-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_50" .f32 0x3CA3D70A#32 ((1 / 50 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S1000000x64 : Shape := ⟨2, ![1000000, 64]⟩
abbrev S64x256 : Shape := ⟨2, ![64, 256]⟩
abbrev S256 : Shape := ⟨1, ![256]⟩
abbrev S256x50 : Shape := ⟨2, ![256, 50]⟩
abbrev S50 : Shape := ⟨1, ![50]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x50 : S_.BroadcastsInDim S256x50 (![] : Fin 0 → Fin S256x50.rank)
  reducesTo_S256x50_S_d0_1 : S256x50.ReducesTo [0, 1] S_
  bcast_S_S50 : S_.BroadcastsInDim S50 (![] : Fin 0 → Fin S50.rank)
  reducesTo_S50_S_d0 : S50.ReducesTo [0] S_
  bcast_S_S4096x50 : S_.BroadcastsInDim S4096x50 (![] : Fin 0 → Fin S4096x50.rank)
  reducesTo_S4096x50_S_d0_1 : S4096x50.ReducesTo [0, 1] S_

variable [Facts]

def fn_part1 {F : FTy → Type} [FloatOps F] (main_arg0 : IVec S4096x50 32) (main_arg5 : FVec F S50 .f32) (main_v13 : IVec S_ 1) (main_v16 : IVec S256x50 1) : IVec S_ 1 :=
  let main_c_5 : IVec S_ 1 := constantI S_ 1 1#1
  let main_v17 : IVec S_ 1 := (fun x v => Host.reduce IntOp.andi x v reducesTo_S256x50_S_d0_1 h_S_) main_v16 main_c_5
  let main_v18 : IVec S_ 1 := andi main_v13 main_v17
  let main_v19 : FVec F S50 .f32 := Host.absf main_arg5
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_c_8 : IVec S_ 32 := constantI S_ 32 0#32
  let main_v24 : IVec S4096x50 32 := broadcastInDim S4096x50 ![] bcast_S_S4096x50 main_c_8
  let main_v25 : IVec S4096x50 1 := cmpi .sge main_arg0 main_v24
  let main_c_9 : IVec S_ 32 := constantI S_ 32 999999#32
  let main_v26 : IVec S4096x50 32 := broadcastInDim S4096x50 ![] bcast_S_S4096x50 main_c_9
  let main_v27 : IVec S4096x50 1 := cmpi .sle main_arg0 main_v26
  let main_v28 : IVec S4096x50 1 := andi main_v25 main_v27
  let main_c_10 : IVec S_ 1 := constantI S_ 1 1#1
  let main_v29 : IVec S_ 1 := (fun x v => Host.reduce IntOp.andi x v reducesTo_S4096x50_S_d0_1 h_S_) main_v28 main_c_10
  let main_v30 : IVec S_ 1 := andi main_v23 main_v29
  main_v30

def fn {F : FTy → Type} [FloatOps F] (main_arg0 : IVec S4096x50 32) (main_arg1 : FVec F S1000000x64 .f32) (main_arg2 : FVec F S64x256 .f32) (main_arg3 : FVec F S256 .f32) (main_arg4 : FVec F S256x50 .f32) (main_arg5 : FVec F S50 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x50 .f32 := Host.absf main_arg4
  let main_cst_4 : FVec F S_ .f32 := constant S_ .f32 0x7F800000#32
  let main_v15 : FVec F S256x50 .f32 := broadcastInDim S256x50 ![] bcast_S_S256x50 main_cst_4
  let main_v16 : IVec S256x50 1 := cmpf .olt main_v14 main_v15
  fn_part1 (F := F) main_arg0 main_arg5 main_v13 main_v16
-- ==== Kernel.lean ====
abbrev S4096x50 : Shape := ⟨2, ![4096, 50]⟩
abbrev S1000000x64 : Shape := ⟨2, ![1000000, 64]⟩
abbrev S64x256 : Shape := ⟨2, ![64, 256]⟩
abbrev S256 : Shape := ⟨1, ![256]⟩
abbrev S256x50 : Shape := ⟨2, ![256, 50]⟩
abbrev S50 : Shape := ⟨1, ![50]⟩
abbrev S64x1000000 : Shape := ⟨2, ![64, 1000000]⟩
abbrev S31x256x64x128 : Shape := ⟨4, ![31, 256, 64, 128]⟩
abbrev S64x32768 : Shape := ⟨2, ![64, 32768]⟩
abbrev S1x256x64x128 : Shape := ⟨4, ![1, 256, 64, 128]⟩
abbrev S64x64 : Shape := ⟨2, ![64, 64]⟩
abbrev S32768x64 : Shape := ⟨2, ![32768, 64]⟩
abbrev S1x1x64x64 : Shape := ⟨4, ![1, 1, 64, 64]⟩
abbrev S507904x128 : Shape := ⟨2, ![507904, 128]⟩
abbrev S_ : Shape := ⟨0, ![]⟩
abbrev S4096x64 : Shape := ⟨2, ![4096, 64]⟩
abbrev S262144 : Shape := ⟨1, ![262144]⟩
abbrev S2048 : Shape := ⟨1, ![2048]⟩
abbrev S2x50x128 : Shape := ⟨3, ![2, 50, 128]⟩
abbrev S2x16x64 : Shape := ⟨3, ![2, 16, 64]⟩
abbrev S1024 : Shape := ⟨1, ![1024]⟩
abbrev S16 : Shape := ⟨1, ![16]⟩
abbrev S1x50x128 : Shape := ⟨3, ![1, 50, 128]⟩
abbrev S50x128 : Shape := ⟨2, ![50, 128]⟩
abbrev S1x16x64 : Shape := ⟨3, ![1, 16, 64]⟩
abbrev S16x64 : Shape := ⟨2, ![16, 64]⟩
abbrev S1 : Shape := ⟨1, ![1]⟩
abbrev S1x1x16 : Shape := ⟨3, ![1, 1, 16]⟩
abbrev S1x256 : Shape := ⟨2, ![1, 256]⟩
abbrev S1x50 : Shape := ⟨2, ![1, 50]⟩
abbrev S512x64 : Shape := ⟨2, ![512, 64]⟩
abbrev S512x50 : Shape := ⟨2, ![512, 50]⟩
abbrev S512x256 : Shape := ⟨2, ![512, 256]⟩
abbrev S512 : Shape := ⟨1, ![512]⟩
abbrev S512x1 : Shape := ⟨2, ![512, 1]⟩

abbrev nBuf : Table → Nat
  | .hbm => 17
  | .local .tc .vmem => 12
  | .local .scVector .vmem => 5
  | _ => 0

abbrev bufTy : (tb : Table) → Fin (nBuf tb) → BufTy
  | .hbm, ⟨0, _⟩ => ⟨S4096x50, .i32⟩
  | .hbm, ⟨1, _⟩ => ⟨S1000000x64, .f32⟩
  | .hbm, ⟨2, _⟩ => ⟨S64x256, .f32⟩
  | .hbm, ⟨3, _⟩ => ⟨S256, .f32⟩
  | .hbm, ⟨4, _⟩ => ⟨S256x50, .f32⟩
  | .hbm, ⟨5, _⟩ => ⟨S50, .f32⟩
  | .hbm, ⟨6, _⟩ => ⟨S64x1000000, .f32⟩
  | .hbm, ⟨7, _⟩ => ⟨S31x256x64x128, .f32⟩
  | .hbm, ⟨8, _⟩ => ⟨S507904x128, .f32⟩
  | .hbm, ⟨9, _⟩ => ⟨S_, .i32⟩
  | .hbm, ⟨10, _⟩ => ⟨S_, .i32⟩
  | .hbm, ⟨11, _⟩ => ⟨S4096x64, .i32⟩
  | .hbm, ⟨12, _⟩ => ⟨S262144, .i32⟩
  | .hbm, ⟨13, _⟩ => ⟨S4096x64, .f32⟩
  | .hbm, ⟨14, _⟩ => ⟨S1x256, .f32⟩
  | .hbm, ⟨15, _⟩ => ⟨S1x50, .f32⟩
  | .hbm, ⟨16, _⟩ => ⟨S4096x50, .f32⟩
  | .local .tc .vmem, ⟨0, _⟩ => ⟨S64x32768, .f32⟩
  | .local .tc .vmem, ⟨1, _⟩ => ⟨S64x32768, .f32⟩
  | .local .tc .vmem, ⟨2, _⟩ => ⟨S1x256x64x128, .f32⟩
  | .local .tc .vmem, ⟨3, _⟩ => ⟨S1x256x64x128, .f32⟩
  | .local .tc .vmem, ⟨4, _⟩ => ⟨S512x64, .f32⟩
  | .local .tc .vmem, ⟨5, _⟩ => ⟨S512x64, .f32⟩
  | .local .tc .vmem, ⟨6, _⟩ => ⟨S64x256, .f32⟩
  | .local .tc .vmem, ⟨7, _⟩ => ⟨S1x256, .f32⟩
  | .local .tc .vmem, ⟨8, _⟩ => ⟨S256x50, .f32⟩
  | .local .tc .vmem, ⟨9, _⟩ => ⟨S1x50, .f32⟩
  | .local .tc .vmem, ⟨10, _⟩ => ⟨S512x50, .f32⟩
  | .local .tc .vmem, ⟨11, _⟩ => ⟨S512x50, .f32⟩
  | .local .scVector .vmem, ⟨0, _⟩ => ⟨S2048, .i32⟩
  | .local .scVector .vmem, ⟨1, _⟩ => ⟨S2048, .i32⟩
  | .local .scVector .vmem, ⟨2, _⟩ => ⟨S2048, .i32⟩
  | .local .scVector .vmem, ⟨3, _⟩ => ⟨S2x50x128, .f32⟩
  | .local .scVector .vmem, ⟨4, _⟩ => ⟨S2x16x64, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v4_scv : Ref sig .scVector := ⟨.hbm, 12, rfl⟩
abbrev main_v2_scv : Ref sig .scVector := ⟨.hbm, 8, rfl⟩
abbrev main_v5_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg5_1 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v3 : BitVec 32 := Scalar.muli v1 c8192_i32
  let v4 : BitVec 32 := Scalar.addi v3 c0_i32
  ![v4.toNat]
def k1_mult1 : BitVec 32 :=
  let c0_i32_514 : BitVec 32 := 0#32
  c0_i32_514
def k1_off2 : Fin 1 → Nat :=
  let c0_i32_515 : BitVec 32 := 0#32
  let c0_i32_514 : BitVec 32 := 0#32
  let v1363 : BitVec 32 := c0_i32_514
  let v1364 : BitVec 32 := Scalar.addi c0_i32_515 v1363
  ![v1364.toNat]
@[reducible] def k1_t1_loop : Scf.Loop 32 :=
  let c0_i32_522 : BitVec 32 := 0#32
  let c4_i32 : BitVec 32 := 4#32
  let v1369 : BitVec 32 := Scalar.addi c0_i32_522 c4_i32
  let c1_i32_523 : BitVec 32 := 1#32
  ⟨c0_i32_522, v1369, c1_i32_523⟩
def k1_cond1 (k1_t1 : Fin k1_t1_loop.trips) : BitVec 1 :=
  let c0_i32_522 : BitVec 32 := 0#32
  let c1_i32_523 : BitVec 32 := 1#32
  let arg16 : BitVec 32 := Scf.iv c0_i32_522 c1_i32_523 k1_t1
  let c2_i32_539 : BitVec 32 := 2#32
  let v1384 : BitVec 32 := Scalar.muli arg16 c2_i32_539
  let c0_i32_540 : BitVec 32 := 0#32
  let v1385 : BitVec 32 := Scalar.addi v1384 c0_i32_540
  let c2_i32_541 : BitVec 32 := 2#32
  let v1386 : BitVec 1 := Scalar.cmpi .sge v1385 c2_i32_541
  let v1387 : BitVec 32 := Scalar.extui v1386
  let c0_i32_542 : BitVec 32 := 0#32
  let v1388 : BitVec 1 := Scalar.cmpi .ne v1387 c0_i32_542
  v1388

def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_522 : BitVec 32 := 0#32
  let c1_i32_523 : BitVec 32 := 1#32
  let arg16 : BitVec 32 := Scf.iv c0_i32_522 c1_i32_523 k1_t1
  let c2_i32_539 : BitVec 32 := 2#32
  let v1384 : BitVec 32 := Scalar.muli arg16 c2_i32_539
  let c0_i32_540 : BitVec 32 := 0#32
  let v1385 : BitVec 32 := Scalar.addi v1384 c0_i32_540
  let c2_i32_583 : BitVec 32 := 2#32
  let v1428 : BitVec 32 := Scalar.subi v1385 c2_i32_583
  let c16_i32_584 : BitVec 32 := 16#32
  let v1429 : BitVec 32 := Scalar.muli v1428 c16_i32_584
  let v1430 : BitVec 32 := Scalar.addi v2 v1429
  let c0_i32_588 : BitVec 32 := 0#32
  ![v1430.toNat, 0]
def k1_cond2 (k1_t1 : Fin k1_t1_loop.trips) : BitVec 1 :=
  let c0_i32_522 : BitVec 32 := 0#32
  let c1_i32_523 : BitVec 32 := 1#32
  let arg16 : BitVec 32 := Scf.iv c0_i32_522 c1_i32_523 k1_t1
  let c2_i32_539 : BitVec 32 := 2#32
  let v1384 : BitVec 32 := Scalar.muli arg16 c2_i32_539
  let c0_i32_540 : BitVec 32 := 0#32
  let v1385 : BitVec 32 := Scalar.addi v1384 c0_i32_540
  let c1_i32_543 : BitVec 32 := 1#32
  let v1389 : BitVec 32 := Scalar.addi v1385 c1_i32_543
  let c8_i32 : BitVec 32 := 8#32
  let v1390 : BitVec 1 := Scalar.cmpi .slt v1389 c8_i32
  let v1391 : BitVec 32 := Scalar.extui v1390
  let c0_i32_544 : BitVec 32 := 0#32
  let v1392 : BitVec 1 := Scalar.cmpi .ne v1391 c0_i32_544
  v1392

def k1_off4 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v3 : BitVec 32 := Scalar.muli v1 c8192_i32
  let c0_i32_522 : BitVec 32 := 0#32
  let c1_i32_523 : BitVec 32 := 1#32
  let arg16 : BitVec 32 := Scf.iv c0_i32_522 c1_i32_523 k1_t1
  let c2_i32_539 : BitVec 32 := 2#32
  let v1384 : BitVec 32 := Scalar.muli arg16 c2_i32_539
  let c0_i32_540 : BitVec 32 := 0#32
  let v1385 : BitVec 32 := Scalar.addi v1384 c0_i32_540
  let c1_i32_583 : BitVec 32 := 1#32
  let v1428 : BitVec 32 := Scalar.addi v1385 c1_i32_583
  let c1024_i32_584 : BitVec 32 := 1024#32
  let v1429 : BitVec 32 := Scalar.muli v1428 c1024_i32_584
  let v1430 : BitVec 32 := Scalar.addi v3 v1429
  ![v1430.toNat]
def k1_cond3 (k1_t1 : Fin k1_t1_loop.trips) : BitVec 1 :=
  let c0_i32_522 : BitVec 32 := 0#32
  let c1_i32_523 : BitVec 32 := 1#32
  let arg16 : BitVec 32 := Scf.iv c0_i32_522 c1_i32_523 k1_t1
  let c2_i32_539 : BitVec 32 := 2#32
  let v1384 : BitVec 32 := Scalar.muli arg16 c2_i32_539
  let c0_i32_540 : BitVec 32 := 0#32
  let v1385 : BitVec 32 := Scalar.addi v1384 c0_i32_540
  let c2_i32_545 : BitVec 32 := 2#32
  let v1393 : BitVec 32 := Scalar.addi v1385 c2_i32_545
  let c8_i32_546 : BitVec 32 := 8#32
  let v1394 : BitVec 1 := Scalar.cmpi .slt v1393 c8_i32_546
  let v1395 : BitVec 32 := Scalar.extui v1394
  let c0_i32_547 : BitVec 32 := 0#32
  let v1396 : BitVec 1 := Scalar.cmpi .ne v1395 c0_i32_547
  v1396

def k1_off5 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v3 : BitVec 32 := Scalar.muli v1 c8192_i32
  let c0_i32_522 : BitVec 32 := 0#32
  let c1_i32_523 : BitVec 32 := 1#32
  let arg16 : BitVec 32 := Scf.iv c0_i32_522 c1_i32_523 k1_t1
  let c2_i32_539 : BitVec 32 := 2#32
  let v1384 : BitVec 32 := Scalar.muli arg16 c2_i32_539
  let c0_i32_540 : BitVec 32 := 0#32
  let v1385 : BitVec 32 := Scalar.addi v1384 c0_i32_540
  let c2_i32_583 : BitVec 32 := 2#32
  let v1428 : BitVec 32 := Scalar.addi v1385 c2_i32_583
  let c1024_i32_584 : BitVec 32 := 1024#32
  let v1429 : BitVec 32 := Scalar.muli v1428 c1024_i32_584
  let v1430 : BitVec 32 := Scalar.addi v3 v1429
  ![v1430.toNat]
@[reducible] def k1_t2_loop : Scf.Loop 32 :=
  let c0_i32_549 : BitVec 32 := 0#32
  let c8_i32_550 : BitVec 32 := 8#32
  let v1397 : BitVec 32 := Scalar.addi c0_i32_549 c8_i32_550
  let c1_i32_551 : BitVec 32 := 1#32
  ⟨c0_i32_549, v1397, c1_i32_551⟩
def k1_mult2 (k1_t2 : Fin k1_t2_loop.trips) : BitVec 32 :=
  let c0_i32_549 : BitVec 32 := 0#32
  let c1_i32_551 : BitVec 32 := 1#32
  let arg17 : BitVec 32 := Scf.iv c0_i32_549 c1_i32_551 k1_t2
  let c2_i32_583 : BitVec 32 := 2#32
  let v1428 : BitVec 32 := Scalar.muli arg17 c2_i32_583
  let c0_i32_584 : BitVec 32 := 0#32
  let v1429 : BitVec 32 := Scalar.addi v1428 c0_i32_584
  let c64_i32_585 : BitVec 32 := 64#32
  let v1430 : BitVec 32 := Scalar.muli v1429 c64_i32_585
  v1430
def k1_off6 (k1_t2 : Fin k1_t2_loop.trips) : Fin 1 → Nat :=
  let c0_i32_586 : BitVec 32 := 0#32
  let c0_i32_549 : BitVec 32 := 0#32
  let c1_i32_551 : BitVec 32 := 1#32
  let arg17 : BitVec 32 := Scf.iv c0_i32_549 c1_i32_551 k1_t2
  let c2_i32_583 : BitVec 32 := 2#32
  let v1428 : BitVec 32 := Scalar.muli arg17 c2_i32_583
  let c0_i32_584 : BitVec 32 := 0#32
  let v1429 : BitVec 32 := Scalar.addi v1428 c0_i32_584
  let c64_i32_585 : BitVec 32 := 64#32
  let v1430 : BitVec 32 := Scalar.muli v1429 c64_i32_585
  let v1431 : BitVec 32 := v1430
  let v1432 : BitVec 32 := Scalar.addi c0_i32_586 v1431
  ![v1432.toNat]
def k1_mult3 (k1_t2 : Fin k1_t2_loop.trips) : BitVec 32 :=
  let c0_i32_549 : BitVec 32 := 0#32
  let c1_i32_551 : BitVec 32 := 1#32
  let arg17 : BitVec 32 := Scf.iv c0_i32_549 c1_i32_551 k1_t2
  let c2_i32_583 : BitVec 32 := 2#32
  let v1428 : BitVec 32 := Scalar.muli arg17 c2_i32_583
  let c0_i32_584 : BitVec 32 := 0#32
  let v1429 : BitVec 32 := Scalar.addi v1428 c0_i32_584
  let c1_i32_592 : BitVec 32 := 1#32
  let v1437 : BitVec 32 := Scalar.addi v1429 c1_i32_592
  let c64_i32_593 : BitVec 32 := 64#32
  let v1438 : BitVec 32 := Scalar.muli v1437 c64_i32_593
  v1438
def k1_off7 (k1_t2 : Fin k1_t2_loop.trips) : Fin 1 → Nat :=
  let c0_i32_594 : BitVec 32 := 0#32
  let c0_i32_549 : BitVec 32 := 0#32
  let c1_i32_551 : BitVec 32 := 1#32
  let arg17 : BitVec 32 := Scf.iv c0_i32_549 c1_i32_551 k1_t2
  let c2_i32_583 : BitVec 32 := 2#32
  let v1428 : BitVec 32 := Scalar.muli arg17 c2_i32_583
  let c0_i32_584 : BitVec 32 := 0#32
  let v1429 : BitVec 32 := Scalar.addi v1428 c0_i32_584
  let c1_i32_592 : BitVec 32 := 1#32
  let v1437 : BitVec 32 := Scalar.addi v1429 c1_i32_592
  let c64_i32_593 : BitVec 32 := 64#32
  let v1438 : BitVec 32 := Scalar.muli v1437 c64_i32_593
  let v1439 : BitVec 32 := v1438
  let v1440 : BitVec 32 := Scalar.addi c0_i32_594 v1439
  ![v1440.toNat]
def k1_mult4 (k1_t2 : Fin k1_t2_loop.trips) : BitVec 32 :=
  let c0_i32_549 : BitVec 32 := 0#32
  let c1_i32_551 : BitVec 32 := 1#32
  let arg17 : BitVec 32 := Scf.iv c0_i32_549 c1_i32_551 k1_t2
  let c2_i32_583 : BitVec 32 := 2#32
  let v1428 : BitVec 32 := Scalar.muli arg17 c2_i32_583
  let c0_i32_584 : BitVec 32 := 0#32
  let v1429 : BitVec 32 := Scalar.addi v1428 c0_i32_584
  let c64_i32_600 : BitVec 32 := 64#32
  let v1446 : BitVec 32 := Scalar.muli v1429 c64_i32_600
  v1446
@[reducible] def k1_t3_loop : Scf.Loop 32 :=
  let c0_i32_602 : BitVec 32 := 0#32
  let c3_i32 : BitVec 32 := 3#32
  let v1449 : BitVec 32 := Scalar.addi c0_i32_602 c3_i32
  let c1_i32_603 : BitVec 32 := 1#32
  ⟨c0_i32_602, v1449, c1_i32_603⟩
def k1_off8 (k1_t2 : Fin k1_t2_loop.trips) (k1_t3 : Fin k1_t3_loop.trips) : Fin 1 → Nat :=
  let c0_i32_601 : BitVec 32 := 0#32
  let c0_i32_549 : BitVec 32 := 0#32
  let c1_i32_551 : BitVec 32 := 1#32
  let arg17 : BitVec 32 := Scf.iv c0_i32_549 c1_i32_551 k1_t2
  let c2_i32_583 : BitVec 32 := 2#32
  let v1428 : BitVec 32 := Scalar.muli arg17 c2_i32_583
  let c0_i32_584 : BitVec 32 := 0#32
  let v1429 : BitVec 32 := Scalar.addi v1428 c0_i32_584
  let c64_i32_600 : BitVec 32 := 64#32
  let v1446 : BitVec 32 := Scalar.muli v1429 c64_i32_600
  let v1447 : BitVec 32 := v1446
  let v1448 : BitVec 32 := Scalar.addi c0_i32_601 v1447
  let c0_i32_602 : BitVec 32 := 0#32
  let c1_i32_603 : BitVec 32 := 1#32
  let arg18 : BitVec 32 := Scf.iv c0_i32_602 c1_i32_603 k1_t3
  let c16_i32_690 : BitVec 32 := 16#32
  let v1659 : BitVec 32 := Scalar.muli arg18 c16_i32_690
  let v1660 : BitVec 32 := Scalar.addi v1448 v1659
  let v1661 : Index := Scalar.indexCast v1660
  ![v1661.toNat]
def k1_mult5 (v1667 : BitVec 32) : BitVec 32 :=
  let c0_i32_693 : BitVec 32 := 0#32
  let v1668 : BitVec 32 := Scalar.addi v1667 c0_i32_693
  v1668

def k1_off9 (k1_t3 : Fin k1_t3_loop.trips) (v1667 : BitVec 32) (c0_i32_693 : BitVec 32) : Fin 3 → Nat :=
  let c0_i32_694 : BitVec 32 := 0#32
  let v1670 : Index := Scalar.indexCast c0_i32_694
  let c0_i32_602 : BitVec 32 := 0#32
  let c1_i32_603 : BitVec 32 := 1#32
  let arg18 : BitVec 32 := Scf.iv c0_i32_602 c1_i32_603 k1_t3
  let c16_i32_691 : BitVec 32 := 16#32
  let v1664 : BitVec 32 := Scalar.muli arg18 c16_i32_691
  let c0_i32_692 : BitVec 32 := 0#32
  let v1665 : BitVec 32 := Scalar.addi v1664 c0_i32_692
  let v1671 : Index := Scalar.indexCast v1665
  let v1668 : BitVec 32 := Scalar.addi v1667 c0_i32_693
  let v1669 : BitVec 32 := v1668
  let v1672 : Index := Scalar.indexCast v1669
  ![0, v1671.toNat, v1672.toNat]
def k1_mult6 (v1667 : BitVec 32) : BitVec 32 :=
  let c16_i32_695 : BitVec 32 := 16#32
  let v1676 : BitVec 32 := Scalar.addi v1667 c16_i32_695
  v1676
def k1_mult7 (v1667 : BitVec 32) : BitVec 32 :=
  let c32_i32_697 : BitVec 32 := 32#32
  let v1684 : BitVec 32 := Scalar.addi v1667 c32_i32_697
  v1684
def k1_mult8 (v1667 : BitVec 32) : BitVec 32 :=
  let c48_i32_699 : BitVec 32 := 48#32
  let v1692 : BitVec 32 := Scalar.addi v1667 c48_i32_699
  v1692

def k1_chk1 (k1_t3 : Fin k1_t3_loop.trips) (v1667 : BitVec 32) : Prop :=
  (16 ∣ (k1_mult5 v1667).toNat) ∧
  (∀ (r : Fin 4), ∀ a, (k1_off9 k1_t3 v1667 (BitVec.ofNat 32 (16 * r.val))) a + S1x1x16.size a ≤ S2x50x128.size a) ∧
  (16 ∣ (k1_mult6 v1667).toNat) ∧
  (16 ∣ (k1_mult7 v1667).toNat) ∧
  (16 ∣ (k1_mult8 v1667).toNat)
instance k1_chk1.dec : ∀ (k1_t3 : Fin k1_t3_loop.trips) (v1667 : BitVec 32), Decidable (k1_chk1 k1_t3 v1667) := fun k1_t3 v1667 => decidable_of_iff' _ (Iff.of_eq (k1_chk1.eq_1 k1_t3 v1667))
theorem k1_mult5_dvd : ∀ (k1_t3 : Fin k1_t3_loop.trips) (v1667 : BitVec 32) (k1_hw1 : k1_chk1 k1_t3 v1667), 16 ∣ (k1_mult5 v1667).toNat := fun k1_t3 v1667 k1_hw1 => k1_hw1.1
theorem k1_off9_inb : ∀ (k1_t3 : Fin k1_t3_loop.trips) (v1667 : BitVec 32) (k1_hw1 : k1_chk1 k1_t3 v1667), ∀ (r : Fin 4), ∀ a, (k1_off9 k1_t3 v1667 (BitVec.ofNat 32 (16 * r.val))) a + S1x1x16.size a ≤ S2x50x128.size a := fun k1_t3 v1667 k1_hw1 r => k1_hw1.2.1 r
theorem k1_mult6_dvd : ∀ (k1_t3 : Fin k1_t3_loop.trips) (v1667 : BitVec 32) (k1_hw1 : k1_chk1 k1_t3 v1667), 16 ∣ (k1_mult6 v1667).toNat := fun k1_t3 v1667 k1_hw1 => k1_hw1.2.2.1
theorem k1_mult7_dvd : ∀ (k1_t3 : Fin k1_t3_loop.trips) (v1667 : BitVec 32) (k1_hw1 : k1_chk1 k1_t3 v1667), 16 ∣ (k1_mult7 v1667).toNat := fun k1_t3 v1667 k1_hw1 => k1_hw1.2.2.2.1
theorem k1_mult8_dvd : ∀ (k1_t3 : Fin k1_t3_loop.trips) (v1667 : BitVec 32) (k1_hw1 : k1_chk1 k1_t3 v1667), 16 ∣ (k1_mult8 v1667).toNat := fun k1_t3 v1667 k1_hw1 => k1_hw1.2.2.2.2

def k1_mult9 (v1703 : BitVec 32) : BitVec 32 :=
  let c0_i32_703 : BitVec 32 := 0#32
  let v1704 : BitVec 32 := Scalar.addi v1703 c0_i32_703
  v1704

def k1_off10 (k1_t3 : Fin k1_t3_loop.trips) (v1703 : BitVec 32) (c0_i32_703 : BitVec 32) : Fin 3 → Nat :=
  let c0_i32_704 : BitVec 32 := 0#32
  let v1706 : Index := Scalar.indexCast c0_i32_704
  let c0_i32_602 : BitVec 32 := 0#32
  let c1_i32_603 : BitVec 32 := 1#32
  let arg18 : BitVec 32 := Scf.iv c0_i32_602 c1_i32_603 k1_t3
  let c16_i32_701 : BitVec 32 := 16#32
  let v1700 : BitVec 32 := Scalar.muli arg18 c16_i32_701
  let c1_i32_702 : BitVec 32 := 1#32
  let v1701 : BitVec 32 := Scalar.addi v1700 c1_i32_702
  let v1707 : Index := Scalar.indexCast v1701
  let v1704 : BitVec 32 := Scalar.addi v1703 c0_i32_703
  let v1705 : BitVec 32 := v1704
  let v1708 : Index := Scalar.indexCast v1705
  ![0, v1707.toNat, v1708.toNat]
def k1_mult10 (v1703 : BitVec 32) : BitVec 32 :=
  let c16_i32_705 : BitVec 32 := 16#32
  let v1712 : BitVec 32 := Scalar.addi v1703 c16_i32_705
  v1712
def k1_mult11 (v1703 : BitVec 32) : BitVec 32 :=
  let c32_i32_707 : BitVec 32 := 32#32
  let v1720 : BitVec 32 := Scalar.addi v1703 c32_i32_707
  v1720
def k1_mult12 (v1703 : BitVec 32) : BitVec 32 :=
  let c48_i32_709 : BitVec 32 := 48#32
  let v1728 : BitVec 32 := Scalar.addi v1703 c48_i32_709
  v1728

def k1_chk2 (k1_t3 : Fin k1_t3_loop.trips) (v1703 : BitVec 32) : Prop :=
  (16 ∣ (k1_mult9 v1703).toNat) ∧
  (∀ (r : Fin 4), ∀ a, (k1_off10 k1_t3 v1703 (BitVec.ofNat 32 (16 * r.val))) a + S1x1x16.size a ≤ S2x50x128.size a) ∧
  (16 ∣ (k1_mult10 v1703).toNat) ∧
  (16 ∣ (k1_mult11 v1703).toNat) ∧
  (16 ∣ (k1_mult12 v1703).toNat)
instance k1_chk2.dec : ∀ (k1_t3 : Fin k1_t3_loop.trips) (v1703 : BitVec 32), Decidable (k1_chk2 k1_t3 v1703) := fun k1_t3 v1703 => decidable_of_iff' _ (Iff.of_eq (k1_chk2.eq_1 k1_t3 v1703))
theorem k1_mult9_dvd : ∀ (k1_t3 : Fin k1_t3_loop.trips) (v1703 : BitVec 32) (k1_hw2 : k1_chk2 k1_t3 v1703), 16 ∣ (k1_mult9 v1703).toNat := fun k1_t3 v1703 k1_hw2 => k1_hw2.1
theorem k1_off10_inb : ∀ (k1_t3 : Fin k1_t3_loop.trips) (v1703 : BitVec 32) (k1_hw2 : k1_chk2 k1_t3 v1703), ∀ (r : Fin 4), ∀ a, (k1_off10 k1_t3 v1703 (BitVec.ofNat 32 (16 * r.val))) a + S1x1x16.size a ≤ S2x50x128.size a := fun k1_t3 v1703 k1_hw2 r => k1_hw2.2.1 r
theorem k1_mult10_dvd : ∀ (k1_t3 : Fin k1_t3_loop.trips) (v1703 : BitVec 32) (k1_hw2 : k1_chk2 k1_t3 v1703), 16 ∣ (k1_mult10 v1703).toNat := fun k1_t3 v1703 k1_hw2 => k1_hw2.2.2.1
theorem k1_mult11_dvd : ∀ (k1_t3 : Fin k1_t3_loop.trips) (v1703 : BitVec 32) (k1_hw2 : k1_chk2 k1_t3 v1703), 16 ∣ (k1_mult11 v1703).toNat := fun k1_t3 v1703 k1_hw2 => k1_hw2.2.2.2.1
theorem k1_mult12_dvd : ∀ (k1_t3 : Fin k1_t3_loop.trips) (v1703 : BitVec 32) (k1_hw2 : k1_chk2 k1_t3 v1703), 16 ∣ (k1_mult12 v1703).toNat := fun k1_t3 v1703 k1_hw2 => k1_hw2.2.2.2.2

def k1_mult13 (v1739 : BitVec 32) : BitVec 32 :=
  let c0_i32_713 : BitVec 32 := 0#32
  let v1740 : BitVec 32 := Scalar.addi v1739 c0_i32_713
  v1740

def k1_off11 (k1_t3 : Fin k1_t3_loop.trips) (v1739 : BitVec 32) (c0_i32_713 : BitVec 32) : Fin 3 → Nat :=
  let c0_i32_714 : BitVec 32 := 0#32
  let v1742 : Index := Scalar.indexCast c0_i32_714
  let c0_i32_602 : BitVec 32 := 0#32
  let c1_i32_603 : BitVec 32 := 1#32
  let arg18 : BitVec 32 := Scf.iv c0_i32_602 c1_i32_603 k1_t3
  let c16_i32_711 : BitVec 32 := 16#32
  let v1736 : BitVec 32 := Scalar.muli arg18 c16_i32_711
  let c2_i32_712 : BitVec 32 := 2#32
  let v1737 : BitVec 32 := Scalar.addi v1736 c2_i32_712
  let v1743 : Index := Scalar.indexCast v1737
  let v1740 : BitVec 32 := Scalar.addi v1739 c0_i32_713
  let v1741 : BitVec 32 := v1740
  let v1744 : Index := Scalar.indexCast v1741
  ![0, v1743.toNat, v1744.toNat]
def k1_mult14 (v1739 : BitVec 32) : BitVec 32 :=
  let c16_i32_715 : BitVec 32 := 16#32
  let v1748 : BitVec 32 := Scalar.addi v1739 c16_i32_715
  v1748
def k1_mult15 (v1739 : BitVec 32) : BitVec 32 :=
  let c32_i32_717 : BitVec 32 := 32#32
  let v1756 : BitVec 32 := Scalar.addi v1739 c32_i32_717
  v1756
def k1_mult16 (v1739 : BitVec 32) : BitVec 32 :=
  let c48_i32_719 : BitVec 32 := 48#32
  let v1764 : BitVec 32 := Scalar.addi v1739 c48_i32_719
  v1764

def k1_chk3 (k1_t3 : Fin k1_t3_loop.trips) (v1739 : BitVec 32) : Prop :=
  (16 ∣ (k1_mult13 v1739).toNat) ∧
  (∀ (r : Fin 4), ∀ a, (k1_off11 k1_t3 v1739 (BitVec.ofNat 32 (16 * r.val))) a + S1x1x16.size a ≤ S2x50x128.size a) ∧
  (16 ∣ (k1_mult14 v1739).toNat) ∧
  (16 ∣ (k1_mult15 v1739).toNat) ∧
  (16 ∣ (k1_mult16 v1739).toNat)
instance k1_chk3.dec : ∀ (k1_t3 : Fin k1_t3_loop.trips) (v1739 : BitVec 32), Decidable (k1_chk3 k1_t3 v1739) := fun k1_t3 v1739 => decidable_of_iff' _ (Iff.of_eq (k1_chk3.eq_1 k1_t3 v1739))
theorem k1_mult13_dvd : ∀ (k1_t3 : Fin k1_t3_loop.trips) (v1739 : BitVec 32) (k1_hw3 : k1_chk3 k1_t3 v1739), 16 ∣ (k1_mult13 v1739).toNat := fun k1_t3 v1739 k1_hw3 => k1_hw3.1
theorem k1_off11_inb : ∀ (k1_t3 : Fin k1_t3_loop.trips) (v1739 : BitVec 32) (k1_hw3 : k1_chk3 k1_t3 v1739), ∀ (r : Fin 4), ∀ a, (k1_off11 k1_t3 v1739 (BitVec.ofNat 32 (16 * r.val))) a + S1x1x16.size a ≤ S2x50x128.size a := fun k1_t3 v1739 k1_hw3 r => k1_hw3.2.1 r
theorem k1_mult14_dvd : ∀ (k1_t3 : Fin k1_t3_loop.trips) (v1739 : BitVec 32) (k1_hw3 : k1_chk3 k1_t3 v1739), 16 ∣ (k1_mult14 v1739).toNat := fun k1_t3 v1739 k1_hw3 => k1_hw3.2.2.1
theorem k1_mult15_dvd : ∀ (k1_t3 : Fin k1_t3_loop.trips) (v1739 : BitVec 32) (k1_hw3 : k1_chk3 k1_t3 v1739), 16 ∣ (k1_mult15 v1739).toNat := fun k1_t3 v1739 k1_hw3 => k1_hw3.2.2.2.1
theorem k1_mult16_dvd : ∀ (k1_t3 : Fin k1_t3_loop.trips) (v1739 : BitVec 32) (k1_hw3 : k1_chk3 k1_t3 v1739), 16 ∣ (k1_mult16 v1739).toNat := fun k1_t3 v1739 k1_hw3 => k1_hw3.2.2.2.2

def k1_mult17 (v1775 : BitVec 32) : BitVec 32 :=
  let c0_i32_723 : BitVec 32 := 0#32
  let v1776 : BitVec 32 := Scalar.addi v1775 c0_i32_723
  v1776

def k1_off12 (k1_t3 : Fin k1_t3_loop.trips) (v1775 : BitVec 32) (c0_i32_723 : BitVec 32) : Fin 3 → Nat :=
  let c0_i32_724 : BitVec 32 := 0#32
  let v1778 : Index := Scalar.indexCast c0_i32_724
  let c0_i32_602 : BitVec 32 := 0#32
  let c1_i32_603 : BitVec 32 := 1#32
  let arg18 : BitVec 32 := Scf.iv c0_i32_602 c1_i32_603 k1_t3
  let c16_i32_721 : BitVec 32 := 16#32
  let v1772 : BitVec 32 := Scalar.muli arg18 c16_i32_721
  let c3_i32_722 : BitVec 32 := 3#32
  let v1773 : BitVec 32 := Scalar.addi v1772 c3_i32_722
  let v1779 : Index := Scalar.indexCast v1773
  let v1776 : BitVec 32 := Scalar.addi v1775 c0_i32_723
  let v1777 : BitVec 32 := v1776
  let v1780 : Index := Scalar.indexCast v1777
  ![0, v1779.toNat, v1780.toNat]
def k1_mult18 (v1775 : BitVec 32) : BitVec 32 :=
  let c16_i32_725 : BitVec 32 := 16#32
  let v1784 : BitVec 32 := Scalar.addi v1775 c16_i32_725
  v1784
def k1_mult19 (v1775 : BitVec 32) : BitVec 32 :=
  let c32_i32_727 : BitVec 32 := 32#32
  let v1792 : BitVec 32 := Scalar.addi v1775 c32_i32_727
  v1792
def k1_mult20 (v1775 : BitVec 32) : BitVec 32 :=
  let c48_i32_729 : BitVec 32 := 48#32
  let v1800 : BitVec 32 := Scalar.addi v1775 c48_i32_729
  v1800

def k1_chk4 (k1_t3 : Fin k1_t3_loop.trips) (v1775 : BitVec 32) : Prop :=
  (16 ∣ (k1_mult17 v1775).toNat) ∧
  (∀ (r : Fin 4), ∀ a, (k1_off12 k1_t3 v1775 (BitVec.ofNat 32 (16 * r.val))) a + S1x1x16.size a ≤ S2x50x128.size a) ∧
  (16 ∣ (k1_mult18 v1775).toNat) ∧
  (16 ∣ (k1_mult19 v1775).toNat) ∧
  (16 ∣ (k1_mult20 v1775).toNat)
instance k1_chk4.dec : ∀ (k1_t3 : Fin k1_t3_loop.trips) (v1775 : BitVec 32), Decidable (k1_chk4 k1_t3 v1775) := fun k1_t3 v1775 => decidable_of_iff' _ (Iff.of_eq (k1_chk4.eq_1 k1_t3 v1775))
theorem k1_mult17_dvd : ∀ (k1_t3 : Fin k1_t3_loop.trips) (v1775 : BitVec 32) (k1_hw4 : k1_chk4 k1_t3 v1775), 16 ∣ (k1_mult17 v1775).toNat := fun k1_t3 v1775 k1_hw4 => k1_hw4.1
theorem k1_off12_inb : ∀ (k1_t3 : Fin k1_t3_loop.trips) (v1775 : BitVec 32) (k1_hw4 : k1_chk4 k1_t3 v1775), ∀ (r : Fin 4), ∀ a, (k1_off12 k1_t3 v1775 (BitVec.ofNat 32 (16 * r.val))) a + S1x1x16.size a ≤ S2x50x128.size a := fun k1_t3 v1775 k1_hw4 r => k1_hw4.2.1 r
theorem k1_mult18_dvd : ∀ (k1_t3 : Fin k1_t3_loop.trips) (v1775 : BitVec 32) (k1_hw4 : k1_chk4 k1_t3 v1775), 16 ∣ (k1_mult18 v1775).toNat := fun k1_t3 v1775 k1_hw4 => k1_hw4.2.2.1
theorem k1_mult19_dvd : ∀ (k1_t3 : Fin k1_t3_loop.trips) (v1775 : BitVec 32) (k1_hw4 : k1_chk4 k1_t3 v1775), 16 ∣ (k1_mult19 v1775).toNat := fun k1_t3 v1775 k1_hw4 => k1_hw4.2.2.2.1
theorem k1_mult20_dvd : ∀ (k1_t3 : Fin k1_t3_loop.trips) (v1775 : BitVec 32) (k1_hw4 : k1_chk4 k1_t3 v1775), 16 ∣ (k1_mult20 v1775).toNat := fun k1_t3 v1775 k1_hw4 => k1_hw4.2.2.2.2

def k1_mult21 (v1811 : BitVec 32) : BitVec 32 :=
  let c0_i32_733 : BitVec 32 := 0#32
  let v1812 : BitVec 32 := Scalar.addi v1811 c0_i32_733
  v1812

def k1_off13 (k1_t3 : Fin k1_t3_loop.trips) (v1811 : BitVec 32) (c0_i32_733 : BitVec 32) : Fin 3 → Nat :=
  let c0_i32_734 : BitVec 32 := 0#32
  let v1814 : Index := Scalar.indexCast c0_i32_734
  let c0_i32_602 : BitVec 32 := 0#32
  let c1_i32_603 : BitVec 32 := 1#32
  let arg18 : BitVec 32 := Scf.iv c0_i32_602 c1_i32_603 k1_t3
  let c16_i32_731 : BitVec 32 := 16#32
  let v1808 : BitVec 32 := Scalar.muli arg18 c16_i32_731
  let c4_i32_732 : BitVec 32 := 4#32
  let v1809 : BitVec 32 := Scalar.addi v1808 c4_i32_732
  let v1815 : Index := Scalar.indexCast v1809
  let v1812 : BitVec 32 := Scalar.addi v1811 c0_i32_733
  let v1813 : BitVec 32 := v1812
  let v1816 : Index := Scalar.indexCast v1813
  ![0, v1815.toNat, v1816.toNat]
def k1_mult22 (v1811 : BitVec 32) : BitVec 32 :=
  let c16_i32_735 : BitVec 32 := 16#32
  let v1820 : BitVec 32 := Scalar.addi v1811 c16_i32_735
  v1820
def k1_mult23 (v1811 : BitVec 32) : BitVec 32 :=
  let c32_i32_737 : BitVec 32 := 32#32
  let v1828 : BitVec 32 := Scalar.addi v1811 c32_i32_737
  v1828
def k1_mult24 (v1811 : BitVec 32) : BitVec 32 :=
  let c48_i32_739 : BitVec 32 := 48#32
  let v1836 : BitVec 32 := Scalar.addi v1811 c48_i32_739
  v1836

def k1_chk5 (k1_t3 : Fin k1_t3_loop.trips) (v1811 : BitVec 32) : Prop :=
  (16 ∣ (k1_mult21 v1811).toNat) ∧
  (∀ (r : Fin 4), ∀ a, (k1_off13 k1_t3 v1811 (BitVec.ofNat 32 (16 * r.val))) a + S1x1x16.size a ≤ S2x50x128.size a) ∧
  (16 ∣ (k1_mult22 v1811).toNat) ∧
  (16 ∣ (k1_mult23 v1811).toNat) ∧
  (16 ∣ (k1_mult24 v1811).toNat)
instance k1_chk5.dec : ∀ (k1_t3 : Fin k1_t3_loop.trips) (v1811 : BitVec 32), Decidable (k1_chk5 k1_t3 v1811) := fun k1_t3 v1811 => decidable_of_iff' _ (Iff.of_eq (k1_chk5.eq_1 k1_t3 v1811))
theorem k1_mult21_dvd : ∀ (k1_t3 : Fin k1_t3_loop.trips) (v1811 : BitVec 32) (k1_hw5 : k1_chk5 k1_t3 v1811), 16 ∣ (k1_mult21 v1811).toNat := fun k1_t3 v1811 k1_hw5 => k1_hw5.1
theorem k1_off13_inb : ∀ (k1_t3 : Fin k1_t3_loop.trips) (v1811 : BitVec 32) (k1_hw5 : k1_chk5 k1_t3 v1811), ∀ (r : Fin 4), ∀ a, (k1_off13 k1_t3 v1811 (BitVec.ofNat 32 (16 * r.val))) a + S1x1x16.size a ≤ S2x50x128.size a := fun k1_t3 v1811 k1_hw5 r => k1_hw5.2.1 r
theorem k1_mult22_dvd : ∀ (k1_t3 : Fin k1_t3_loop.trips) (v1811 : BitVec 32) (k1_hw5 : k1_chk5 k1_t3 v1811), 16 ∣ (k1_mult22 v1811).toNat := fun k1_t3 v1811 k1_hw5 => k1_hw5.2.2.1
theorem k1_mult23_dvd : ∀ (k1_t3 : Fin k1_t3_loop.trips) (v1811 : BitVec 32) (k1_hw5 : k1_chk5 k1_t3 v1811), 16 ∣ (k1_mult23 v1811).toNat := fun k1_t3 v1811 k1_hw5 => k1_hw5.2.2.2.1
theorem k1_mult24_dvd : ∀ (k1_t3 : Fin k1_t3_loop.trips) (v1811 : BitVec 32) (k1_hw5 : k1_chk5 k1_t3 v1811), 16 ∣ (k1_mult24 v1811).toNat := fun k1_t3 v1811 k1_hw5 => k1_hw5.2.2.2.2

def k1_mult25 (v1847 : BitVec 32) : BitVec 32 :=
  let c0_i32_742 : BitVec 32 := 0#32
  let v1848 : BitVec 32 := Scalar.addi v1847 c0_i32_742
  v1848

def k1_off14 (k1_t3 : Fin k1_t3_loop.trips) (v1847 : BitVec 32) (c0_i32_742 : BitVec 32) : Fin 3 → Nat :=
  let c0_i32_743 : BitVec 32 := 0#32
  let v1850 : Index := Scalar.indexCast c0_i32_743
  let c0_i32_602 : BitVec 32 := 0#32
  let c1_i32_603 : BitVec 32 := 1#32
  let arg18 : BitVec 32 := Scf.iv c0_i32_602 c1_i32_603 k1_t3
  let c16_i32_741 : BitVec 32 := 16#32
  let v1844 : BitVec 32 := Scalar.muli arg18 c16_i32_741
  let c5_i32 : BitVec 32 := 5#32
  let v1845 : BitVec 32 := Scalar.addi v1844 c5_i32
  let v1851 : Index := Scalar.indexCast v1845
  let v1848 : BitVec 32 := Scalar.addi v1847 c0_i32_742
  let v1849 : BitVec 32 := v1848
  let v1852 : Index := Scalar.indexCast v1849
  ![0, v1851.toNat, v1852.toNat]
def k1_mult26 (v1847 : BitVec 32) : BitVec 32 :=
  let c16_i32_744 : BitVec 32 := 16#32
  let v1856 : BitVec 32 := Scalar.addi v1847 c16_i32_744
  v1856
def k1_mult27 (v1847 : BitVec 32) : BitVec 32 :=
  let c32_i32_746 : BitVec 32 := 32#32
  let v1864 : BitVec 32 := Scalar.addi v1847 c32_i32_746
  v1864
def k1_mult28 (v1847 : BitVec 32) : BitVec 32 :=
  let c48_i32_748 : BitVec 32 := 48#32
  let v1872 : BitVec 32 := Scalar.addi v1847 c48_i32_748
  v1872

def k1_chk6 (k1_t3 : Fin k1_t3_loop.trips) (v1847 : BitVec 32) : Prop :=
  (16 ∣ (k1_mult25 v1847).toNat) ∧
  (∀ (r : Fin 4), ∀ a, (k1_off14 k1_t3 v1847 (BitVec.ofNat 32 (16 * r.val))) a + S1x1x16.size a ≤ S2x50x128.size a) ∧
  (16 ∣ (k1_mult26 v1847).toNat) ∧
  (16 ∣ (k1_mult27 v1847).toNat) ∧
  (16 ∣ (k1_mult28 v1847).toNat)
instance k1_chk6.dec : ∀ (k1_t3 : Fin k1_t3_loop.trips) (v1847 : BitVec 32), Decidable (k1_chk6 k1_t3 v1847) := fun k1_t3 v1847 => decidable_of_iff' _ (Iff.of_eq (k1_chk6.eq_1 k1_t3 v1847))
theorem k1_mult25_dvd : ∀ (k1_t3 : Fin k1_t3_loop.trips) (v1847 : BitVec 32) (k1_hw6 : k1_chk6 k1_t3 v1847), 16 ∣ (k1_mult25 v1847).toNat := fun k1_t3 v1847 k1_hw6 => k1_hw6.1
theorem k1_off14_inb : ∀ (k1_t3 : Fin k1_t3_loop.trips) (v1847 : BitVec 32) (k1_hw6 : k1_chk6 k1_t3 v1847), ∀ (r : Fin 4), ∀ a, (k1_off14 k1_t3 v1847 (BitVec.ofNat 32 (16 * r.val))) a + S1x1x16.size a ≤ S2x50x128.size a := fun k1_t3 v1847 k1_hw6 r => k1_hw6.2.1 r
theorem k1_mult26_dvd : ∀ (k1_t3 : Fin k1_t3_loop.trips) (v1847 : BitVec 32) (k1_hw6 : k1_chk6 k1_t3 v1847), 16 ∣ (k1_mult26 v1847).toNat := fun k1_t3 v1847 k1_hw6 => k1_hw6.2.2.1
theorem k1_mult27_dvd : ∀ (k1_t3 : Fin k1_t3_loop.trips) (v1847 : BitVec 32) (k1_hw6 : k1_chk6 k1_t3 v1847), 16 ∣ (k1_mult27 v1847).toNat := fun k1_t3 v1847 k1_hw6 => k1_hw6.2.2.2.1
theorem k1_mult28_dvd : ∀ (k1_t3 : Fin k1_t3_loop.trips) (v1847 : BitVec 32) (k1_hw6 : k1_chk6 k1_t3 v1847), 16 ∣ (k1_mult28 v1847).toNat := fun k1_t3 v1847 k1_hw6 => k1_hw6.2.2.2.2

def k1_mult29 (v1883 : BitVec 32) : BitVec 32 :=
  let c0_i32_752 : BitVec 32 := 0#32
  let v1884 : BitVec 32 := Scalar.addi v1883 c0_i32_752
  v1884

def k1_off15 (k1_t3 : Fin k1_t3_loop.trips) (v1883 : BitVec 32) (c0_i32_752 : BitVec 32) : Fin 3 → Nat :=
  let c0_i32_753 : BitVec 32 := 0#32
  let v1886 : Index := Scalar.indexCast c0_i32_753
  let c0_i32_602 : BitVec 32 := 0#32
  let c1_i32_603 : BitVec 32 := 1#32
  let arg18 : BitVec 32 := Scf.iv c0_i32_602 c1_i32_603 k1_t3
  let c16_i32_750 : BitVec 32 := 16#32
  let v1880 : BitVec 32 := Scalar.muli arg18 c16_i32_750
  let c6_i32_751 : BitVec 32 := 6#32
  let v1881 : BitVec 32 := Scalar.addi v1880 c6_i32_751
  let v1887 : Index := Scalar.indexCast v1881
  let v1884 : BitVec 32 := Scalar.addi v1883 c0_i32_752
  let v1885 : BitVec 32 := v1884
  let v1888 : Index := Scalar.indexCast v1885
  ![0, v1887.toNat, v1888.toNat]
def k1_mult30 (v1883 : BitVec 32) : BitVec 32 :=
  let c16_i32_754 : BitVec 32 := 16#32
  let v1892 : BitVec 32 := Scalar.addi v1883 c16_i32_754
  v1892
def k1_mult31 (v1883 : BitVec 32) : BitVec 32 :=
  let c32_i32_756 : BitVec 32 := 32#32
  let v1900 : BitVec 32 := Scalar.addi v1883 c32_i32_756
  v1900
def k1_mult32 (v1883 : BitVec 32) : BitVec 32 :=
  let c48_i32_758 : BitVec 32 := 48#32
  let v1908 : BitVec 32 := Scalar.addi v1883 c48_i32_758
  v1908

def k1_chk7 (k1_t3 : Fin k1_t3_loop.trips) (v1883 : BitVec 32) : Prop :=
  (16 ∣ (k1_mult29 v1883).toNat) ∧
  (∀ (r : Fin 4), ∀ a, (k1_off15 k1_t3 v1883 (BitVec.ofNat 32 (16 * r.val))) a + S1x1x16.size a ≤ S2x50x128.size a) ∧
  (16 ∣ (k1_mult30 v1883).toNat) ∧
  (16 ∣ (k1_mult31 v1883).toNat) ∧
  (16 ∣ (k1_mult32 v1883).toNat)
instance k1_chk7.dec : ∀ (k1_t3 : Fin k1_t3_loop.trips) (v1883 : BitVec 32), Decidable (k1_chk7 k1_t3 v1883) := fun k1_t3 v1883 => decidable_of_iff' _ (Iff.of_eq (k1_chk7.eq_1 k1_t3 v1883))
theorem k1_mult29_dvd : ∀ (k1_t3 : Fin k1_t3_loop.trips) (v1883 : BitVec 32) (k1_hw7 : k1_chk7 k1_t3 v1883), 16 ∣ (k1_mult29 v1883).toNat := fun k1_t3 v1883 k1_hw7 => k1_hw7.1
theorem k1_off15_inb : ∀ (k1_t3 : Fin k1_t3_loop.trips) (v1883 : BitVec 32) (k1_hw7 : k1_chk7 k1_t3 v1883), ∀ (r : Fin 4), ∀ a, (k1_off15 k1_t3 v1883 (BitVec.ofNat 32 (16 * r.val))) a + S1x1x16.size a ≤ S2x50x128.size a := fun k1_t3 v1883 k1_hw7 r => k1_hw7.2.1 r
theorem k1_mult30_dvd : ∀ (k1_t3 : Fin k1_t3_loop.trips) (v1883 : BitVec 32) (k1_hw7 : k1_chk7 k1_t3 v1883), 16 ∣ (k1_mult30 v1883).toNat := fun k1_t3 v1883 k1_hw7 => k1_hw7.2.2.1
theorem k1_mult31_dvd : ∀ (k1_t3 : Fin k1_t3_loop.trips) (v1883 : BitVec 32) (k1_hw7 : k1_chk7 k1_t3 v1883), 16 ∣ (k1_mult31 v1883).toNat := fun k1_t3 v1883 k1_hw7 => k1_hw7.2.2.2.1
theorem k1_mult32_dvd : ∀ (k1_t3 : Fin k1_t3_loop.trips) (v1883 : BitVec 32) (k1_hw7 : k1_chk7 k1_t3 v1883), 16 ∣ (k1_mult32 v1883).toNat := fun k1_t3 v1883 k1_hw7 => k1_hw7.2.2.2.2

def k1_mult33 (v1919 : BitVec 32) : BitVec 32 :=
  let c0_i32_762 : BitVec 32 := 0#32
  let v1920 : BitVec 32 := Scalar.addi v1919 c0_i32_762
  v1920

def k1_off16 (k1_t3 : Fin k1_t3_loop.trips) (v1919 : BitVec 32) (c0_i32_762 : BitVec 32) : Fin 3 → Nat :=
  let c0_i32_763 : BitVec 32 := 0#32
  let v1922 : Index := Scalar.indexCast c0_i32_763
  let c0_i32_602 : BitVec 32 := 0#32
  let c1_i32_603 : BitVec 32 := 1#32
  let arg18 : BitVec 32 := Scf.iv c0_i32_602 c1_i32_603 k1_t3
  let c16_i32_760 : BitVec 32 := 16#32
  let v1916 : BitVec 32 := Scalar.muli arg18 c16_i32_760
  let c7_i32_761 : BitVec 32 := 7#32
  let v1917 : BitVec 32 := Scalar.addi v1916 c7_i32_761
  let v1923 : Index := Scalar.indexCast v1917
  let v1920 : BitVec 32 := Scalar.addi v1919 c0_i32_762
  let v1921 : BitVec 32 := v1920
  let v1924 : Index := Scalar.indexCast v1921
  ![0, v1923.toNat, v1924.toNat]
def k1_mult34 (v1919 : BitVec 32) : BitVec 32 :=
  let c16_i32_764 : BitVec 32 := 16#32
  let v1928 : BitVec 32 := Scalar.addi v1919 c16_i32_764
  v1928
def k1_mult35 (v1919 : BitVec 32) : BitVec 32 :=
  let c32_i32_766 : BitVec 32 := 32#32
  let v1936 : BitVec 32 := Scalar.addi v1919 c32_i32_766
  v1936
def k1_mult36 (v1919 : BitVec 32) : BitVec 32 :=
  let c48_i32_768 : BitVec 32 := 48#32
  let v1944 : BitVec 32 := Scalar.addi v1919 c48_i32_768
  v1944

def k1_chk8 (k1_t3 : Fin k1_t3_loop.trips) (v1919 : BitVec 32) : Prop :=
  (16 ∣ (k1_mult33 v1919).toNat) ∧
  (∀ (r : Fin 4), ∀ a, (k1_off16 k1_t3 v1919 (BitVec.ofNat 32 (16 * r.val))) a + S1x1x16.size a ≤ S2x50x128.size a) ∧
  (16 ∣ (k1_mult34 v1919).toNat) ∧
  (16 ∣ (k1_mult35 v1919).toNat) ∧
  (16 ∣ (k1_mult36 v1919).toNat)
instance k1_chk8.dec : ∀ (k1_t3 : Fin k1_t3_loop.trips) (v1919 : BitVec 32), Decidable (k1_chk8 k1_t3 v1919) := fun k1_t3 v1919 => decidable_of_iff' _ (Iff.of_eq (k1_chk8.eq_1 k1_t3 v1919))
theorem k1_mult33_dvd : ∀ (k1_t3 : Fin k1_t3_loop.trips) (v1919 : BitVec 32) (k1_hw8 : k1_chk8 k1_t3 v1919), 16 ∣ (k1_mult33 v1919).toNat := fun k1_t3 v1919 k1_hw8 => k1_hw8.1
theorem k1_off16_inb : ∀ (k1_t3 : Fin k1_t3_loop.trips) (v1919 : BitVec 32) (k1_hw8 : k1_chk8 k1_t3 v1919), ∀ (r : Fin 4), ∀ a, (k1_off16 k1_t3 v1919 (BitVec.ofNat 32 (16 * r.val))) a + S1x1x16.size a ≤ S2x50x128.size a := fun k1_t3 v1919 k1_hw8 r => k1_hw8.2.1 r
theorem k1_mult34_dvd : ∀ (k1_t3 : Fin k1_t3_loop.trips) (v1919 : BitVec 32) (k1_hw8 : k1_chk8 k1_t3 v1919), 16 ∣ (k1_mult34 v1919).toNat := fun k1_t3 v1919 k1_hw8 => k1_hw8.2.2.1
theorem k1_mult35_dvd : ∀ (k1_t3 : Fin k1_t3_loop.trips) (v1919 : BitVec 32) (k1_hw8 : k1_chk8 k1_t3 v1919), 16 ∣ (k1_mult35 v1919).toNat := fun k1_t3 v1919 k1_hw8 => k1_hw8.2.2.2.1
theorem k1_mult36_dvd : ∀ (k1_t3 : Fin k1_t3_loop.trips) (v1919 : BitVec 32) (k1_hw8 : k1_chk8 k1_t3 v1919), 16 ∣ (k1_mult36 v1919).toNat := fun k1_t3 v1919 k1_hw8 => k1_hw8.2.2.2.2

def k1_mult37 (v1955 : BitVec 32) : BitVec 32 :=
  let c0_i32_772 : BitVec 32 := 0#32
  let v1956 : BitVec 32 := Scalar.addi v1955 c0_i32_772
  v1956

def k1_off17 (k1_t3 : Fin k1_t3_loop.trips) (v1955 : BitVec 32) (c0_i32_772 : BitVec 32) : Fin 3 → Nat :=
  let c0_i32_773 : BitVec 32 := 0#32
  let v1958 : Index := Scalar.indexCast c0_i32_773
  let c0_i32_602 : BitVec 32 := 0#32
  let c1_i32_603 : BitVec 32 := 1#32
  let arg18 : BitVec 32 := Scf.iv c0_i32_602 c1_i32_603 k1_t3
  let c16_i32_770 : BitVec 32 := 16#32
  let v1952 : BitVec 32 := Scalar.muli arg18 c16_i32_770
  let c8_i32_771 : BitVec 32 := 8#32
  let v1953 : BitVec 32 := Scalar.addi v1952 c8_i32_771
  let v1959 : Index := Scalar.indexCast v1953
  let v1956 : BitVec 32 := Scalar.addi v1955 c0_i32_772
  let v1957 : BitVec 32 := v1956
  let v1960 : Index := Scalar.indexCast v1957
  ![0, v1959.toNat, v1960.toNat]
def k1_mult38 (v1955 : BitVec 32) : BitVec 32 :=
  let c16_i32_774 : BitVec 32 := 16#32
  let v1964 : BitVec 32 := Scalar.addi v1955 c16_i32_774
  v1964
def k1_mult39 (v1955 : BitVec 32) : BitVec 32 :=
  let c32_i32_776 : BitVec 32 := 32#32
  let v1972 : BitVec 32 := Scalar.addi v1955 c32_i32_776
  v1972
def k1_mult40 (v1955 : BitVec 32) : BitVec 32 :=
  let c48_i32_778 : BitVec 32 := 48#32
  let v1980 : BitVec 32 := Scalar.addi v1955 c48_i32_778
  v1980

def k1_chk9 (k1_t3 : Fin k1_t3_loop.trips) (v1955 : BitVec 32) : Prop :=
  (16 ∣ (k1_mult37 v1955).toNat) ∧
  (∀ (r : Fin 4), ∀ a, (k1_off17 k1_t3 v1955 (BitVec.ofNat 32 (16 * r.val))) a + S1x1x16.size a ≤ S2x50x128.size a) ∧
  (16 ∣ (k1_mult38 v1955).toNat) ∧
  (16 ∣ (k1_mult39 v1955).toNat) ∧
  (16 ∣ (k1_mult40 v1955).toNat)
instance k1_chk9.dec : ∀ (k1_t3 : Fin k1_t3_loop.trips) (v1955 : BitVec 32), Decidable (k1_chk9 k1_t3 v1955) := fun k1_t3 v1955 => decidable_of_iff' _ (Iff.of_eq (k1_chk9.eq_1 k1_t3 v1955))
theorem k1_mult37_dvd : ∀ (k1_t3 : Fin k1_t3_loop.trips) (v1955 : BitVec 32) (k1_hw9 : k1_chk9 k1_t3 v1955), 16 ∣ (k1_mult37 v1955).toNat := fun k1_t3 v1955 k1_hw9 => k1_hw9.1
theorem k1_off17_inb : ∀ (k1_t3 : Fin k1_t3_loop.trips) (v1955 : BitVec 32) (k1_hw9 : k1_chk9 k1_t3 v1955), ∀ (r : Fin 4), ∀ a, (k1_off17 k1_t3 v1955 (BitVec.ofNat 32 (16 * r.val))) a + S1x1x16.size a ≤ S2x50x128.size a := fun k1_t3 v1955 k1_hw9 r => k1_hw9.2.1 r
theorem k1_mult38_dvd : ∀ (k1_t3 : Fin k1_t3_loop.trips) (v1955 : BitVec 32) (k1_hw9 : k1_chk9 k1_t3 v1955), 16 ∣ (k1_mult38 v1955).toNat := fun k1_t3 v1955 k1_hw9 => k1_hw9.2.2.1
theorem k1_mult39_dvd : ∀ (k1_t3 : Fin k1_t3_loop.trips) (v1955 : BitVec 32) (k1_hw9 : k1_chk9 k1_t3 v1955), 16 ∣ (k1_mult39 v1955).toNat := fun k1_t3 v1955 k1_hw9 => k1_hw9.2.2.2.1
theorem k1_mult40_dvd : ∀ (k1_t3 : Fin k1_t3_loop.trips) (v1955 : BitVec 32) (k1_hw9 : k1_chk9 k1_t3 v1955), 16 ∣ (k1_mult40 v1955).toNat := fun k1_t3 v1955 k1_hw9 => k1_hw9.2.2.2.2

def k1_mult41 (v1991 : BitVec 32) : BitVec 32 :=
  let c0_i32_781 : BitVec 32 := 0#32
  let v1992 : BitVec 32 := Scalar.addi v1991 c0_i32_781
  v1992

def k1_off18 (k1_t3 : Fin k1_t3_loop.trips) (v1991 : BitVec 32) (c0_i32_781 : BitVec 32) : Fin 3 → Nat :=
  let c0_i32_782 : BitVec 32 := 0#32
  let v1994 : Index := Scalar.indexCast c0_i32_782
  let c0_i32_602 : BitVec 32 := 0#32
  let c1_i32_603 : BitVec 32 := 1#32
  let arg18 : BitVec 32 := Scf.iv c0_i32_602 c1_i32_603 k1_t3
  let c16_i32_780 : BitVec 32 := 16#32
  let v1988 : BitVec 32 := Scalar.muli arg18 c16_i32_780
  let c9_i32 : BitVec 32 := 9#32
  let v1989 : BitVec 32 := Scalar.addi v1988 c9_i32
  let v1995 : Index := Scalar.indexCast v1989
  let v1992 : BitVec 32 := Scalar.addi v1991 c0_i32_781
  let v1993 : BitVec 32 := v1992
  let v1996 : Index := Scalar.indexCast v1993
  ![0, v1995.toNat, v1996.toNat]
def k1_mult42 (v1991 : BitVec 32) : BitVec 32 :=
  let c16_i32_783 : BitVec 32 := 16#32
  let v2000 : BitVec 32 := Scalar.addi v1991 c16_i32_783
  v2000
def k1_mult43 (v1991 : BitVec 32) : BitVec 32 :=
  let c32_i32_785 : BitVec 32 := 32#32
  let v2008 : BitVec 32 := Scalar.addi v1991 c32_i32_785
  v2008
def k1_mult44 (v1991 : BitVec 32) : BitVec 32 :=
  let c48_i32_787 : BitVec 32 := 48#32
  let v2016 : BitVec 32 := Scalar.addi v1991 c48_i32_787
  v2016

def k1_chk10 (k1_t3 : Fin k1_t3_loop.trips) (v1991 : BitVec 32) : Prop :=
  (16 ∣ (k1_mult41 v1991).toNat) ∧
  (∀ (r : Fin 4), ∀ a, (k1_off18 k1_t3 v1991 (BitVec.ofNat 32 (16 * r.val))) a + S1x1x16.size a ≤ S2x50x128.size a) ∧
  (16 ∣ (k1_mult42 v1991).toNat) ∧
  (16 ∣ (k1_mult43 v1991).toNat) ∧
  (16 ∣ (k1_mult44 v1991).toNat)
instance k1_chk10.dec : ∀ (k1_t3 : Fin k1_t3_loop.trips) (v1991 : BitVec 32), Decidable (k1_chk10 k1_t3 v1991) := fun k1_t3 v1991 => decidable_of_iff' _ (Iff.of_eq (k1_chk10.eq_1 k1_t3 v1991))
theorem k1_mult41_dvd : ∀ (k1_t3 : Fin k1_t3_loop.trips) (v1991 : BitVec 32) (k1_hw10 : k1_chk10 k1_t3 v1991), 16 ∣ (k1_mult41 v1991).toNat := fun k1_t3 v1991 k1_hw10 => k1_hw10.1
theorem k1_off18_inb : ∀ (k1_t3 : Fin k1_t3_loop.trips) (v1991 : BitVec 32) (k1_hw10 : k1_chk10 k1_t3 v1991), ∀ (r : Fin 4), ∀ a, (k1_off18 k1_t3 v1991 (BitVec.ofNat 32 (16 * r.val))) a + S1x1x16.size a ≤ S2x50x128.size a := fun k1_t3 v1991 k1_hw10 r => k1_hw10.2.1 r
theorem k1_mult42_dvd : ∀ (k1_t3 : Fin k1_t3_loop.trips) (v1991 : BitVec 32) (k1_hw10 : k1_chk10 k1_t3 v1991), 16 ∣ (k1_mult42 v1991).toNat := fun k1_t3 v1991 k1_hw10 => k1_hw10.2.2.1
theorem k1_mult43_dvd : ∀ (k1_t3 : Fin k1_t3_loop.trips) (v1991 : BitVec 32) (k1_hw10 : k1_chk10 k1_t3 v1991), 16 ∣ (k1_mult43 v1991).toNat := fun k1_t3 v1991 k1_hw10 => k1_hw10.2.2.2.1
theorem k1_mult44_dvd : ∀ (k1_t3 : Fin k1_t3_loop.trips) (v1991 : BitVec 32) (k1_hw10 : k1_chk10 k1_t3 v1991), 16 ∣ (k1_mult44 v1991).toNat := fun k1_t3 v1991 k1_hw10 => k1_hw10.2.2.2.2

def k1_mult45 (v2027 : BitVec 32) : BitVec 32 :=
  let c0_i32_790 : BitVec 32 := 0#32
  let v2028 : BitVec 32 := Scalar.addi v2027 c0_i32_790
  v2028

def k1_off19 (k1_t3 : Fin k1_t3_loop.trips) (v2027 : BitVec 32) (c0_i32_790 : BitVec 32) : Fin 3 → Nat :=
  let c0_i32_791 : BitVec 32 := 0#32
  let v2030 : Index := Scalar.indexCast c0_i32_791
  let c0_i32_602 : BitVec 32 := 0#32
  let c1_i32_603 : BitVec 32 := 1#32
  let arg18 : BitVec 32 := Scf.iv c0_i32_602 c1_i32_603 k1_t3
  let c16_i32_789 : BitVec 32 := 16#32
  let v2024 : BitVec 32 := Scalar.muli arg18 c16_i32_789
  let c10_i32 : BitVec 32 := 10#32
  let v2025 : BitVec 32 := Scalar.addi v2024 c10_i32
  let v2031 : Index := Scalar.indexCast v2025
  let v2028 : BitVec 32 := Scalar.addi v2027 c0_i32_790
  let v2029 : BitVec 32 := v2028
  let v2032 : Index := Scalar.indexCast v2029
  ![0, v2031.toNat, v2032.toNat]
def k1_mult46 (v2027 : BitVec 32) : BitVec 32 :=
  let c16_i32_792 : BitVec 32 := 16#32
  let v2036 : BitVec 32 := Scalar.addi v2027 c16_i32_792
  v2036
def k1_mult47 (v2027 : BitVec 32) : BitVec 32 :=
  let c32_i32_794 : BitVec 32 := 32#32
  let v2044 : BitVec 32 := Scalar.addi v2027 c32_i32_794
  v2044
def k1_mult48 (v2027 : BitVec 32) : BitVec 32 :=
  let c48_i32_796 : BitVec 32 := 48#32
  let v2052 : BitVec 32 := Scalar.addi v2027 c48_i32_796
  v2052

def k1_chk11 (k1_t3 : Fin k1_t3_loop.trips) (v2027 : BitVec 32) : Prop :=
  (16 ∣ (k1_mult45 v2027).toNat) ∧
  (∀ (r : Fin 4), ∀ a, (k1_off19 k1_t3 v2027 (BitVec.ofNat 32 (16 * r.val))) a + S1x1x16.size a ≤ S2x50x128.size a) ∧
  (16 ∣ (k1_mult46 v2027).toNat) ∧
  (16 ∣ (k1_mult47 v2027).toNat) ∧
  (16 ∣ (k1_mult48 v2027).toNat)
instance k1_chk11.dec : ∀ (k1_t3 : Fin k1_t3_loop.trips) (v2027 : BitVec 32), Decidable (k1_chk11 k1_t3 v2027) := fun k1_t3 v2027 => decidable_of_iff' _ (Iff.of_eq (k1_chk11.eq_1 k1_t3 v2027))
theorem k1_mult45_dvd : ∀ (k1_t3 : Fin k1_t3_loop.trips) (v2027 : BitVec 32) (k1_hw11 : k1_chk11 k1_t3 v2027), 16 ∣ (k1_mult45 v2027).toNat := fun k1_t3 v2027 k1_hw11 => k1_hw11.1
theorem k1_off19_inb : ∀ (k1_t3 : Fin k1_t3_loop.trips) (v2027 : BitVec 32) (k1_hw11 : k1_chk11 k1_t3 v2027), ∀ (r : Fin 4), ∀ a, (k1_off19 k1_t3 v2027 (BitVec.ofNat 32 (16 * r.val))) a + S1x1x16.size a ≤ S2x50x128.size a := fun k1_t3 v2027 k1_hw11 r => k1_hw11.2.1 r
theorem k1_mult46_dvd : ∀ (k1_t3 : Fin k1_t3_loop.trips) (v2027 : BitVec 32) (k1_hw11 : k1_chk11 k1_t3 v2027), 16 ∣ (k1_mult46 v2027).toNat := fun k1_t3 v2027 k1_hw11 => k1_hw11.2.2.1
theorem k1_mult47_dvd : ∀ (k1_t3 : Fin k1_t3_loop.trips) (v2027 : BitVec 32) (k1_hw11 : k1_chk11 k1_t3 v2027), 16 ∣ (k1_mult47 v2027).toNat := fun k1_t3 v2027 k1_hw11 => k1_hw11.2.2.2.1
theorem k1_mult48_dvd : ∀ (k1_t3 : Fin k1_t3_loop.trips) (v2027 : BitVec 32) (k1_hw11 : k1_chk11 k1_t3 v2027), 16 ∣ (k1_mult48 v2027).toNat := fun k1_t3 v2027 k1_hw11 => k1_hw11.2.2.2.2

def k1_mult49 (v2063 : BitVec 32) : BitVec 32 :=
  let c0_i32_799 : BitVec 32 := 0#32
  let v2064 : BitVec 32 := Scalar.addi v2063 c0_i32_799
  v2064

def k1_off20 (k1_t3 : Fin k1_t3_loop.trips) (v2063 : BitVec 32) (c0_i32_799 : BitVec 32) : Fin 3 → Nat :=
  let c0_i32_800 : BitVec 32 := 0#32
  let v2066 : Index := Scalar.indexCast c0_i32_800
  let c0_i32_602 : BitVec 32 := 0#32
  let c1_i32_603 : BitVec 32 := 1#32
  let arg18 : BitVec 32 := Scf.iv c0_i32_602 c1_i32_603 k1_t3
  let c16_i32_798 : BitVec 32 := 16#32
  let v2060 : BitVec 32 := Scalar.muli arg18 c16_i32_798
  let c11_i32 : BitVec 32 := 11#32
  let v2061 : BitVec 32 := Scalar.addi v2060 c11_i32
  let v2067 : Index := Scalar.indexCast v2061
  let v2064 : BitVec 32 := Scalar.addi v2063 c0_i32_799
  let v2065 : BitVec 32 := v2064
  let v2068 : Index := Scalar.indexCast v2065
  ![0, v2067.toNat, v2068.toNat]
def k1_mult50 (v2063 : BitVec 32) : BitVec 32 :=
  let c16_i32_801 : BitVec 32 := 16#32
  let v2072 : BitVec 32 := Scalar.addi v2063 c16_i32_801
  v2072
def k1_mult51 (v2063 : BitVec 32) : BitVec 32 :=
  let c32_i32_803 : BitVec 32 := 32#32
  let v2080 : BitVec 32 := Scalar.addi v2063 c32_i32_803
  v2080
def k1_mult52 (v2063 : BitVec 32) : BitVec 32 :=
  let c48_i32_805 : BitVec 32 := 48#32
  let v2088 : BitVec 32 := Scalar.addi v2063 c48_i32_805
  v2088

def k1_chk12 (k1_t3 : Fin k1_t3_loop.trips) (v2063 : BitVec 32) : Prop :=
  (16 ∣ (k1_mult49 v2063).toNat) ∧
  (∀ (r : Fin 4), ∀ a, (k1_off20 k1_t3 v2063 (BitVec.ofNat 32 (16 * r.val))) a + S1x1x16.size a ≤ S2x50x128.size a) ∧
  (16 ∣ (k1_mult50 v2063).toNat) ∧
  (16 ∣ (k1_mult51 v2063).toNat) ∧
  (16 ∣ (k1_mult52 v2063).toNat)
instance k1_chk12.dec : ∀ (k1_t3 : Fin k1_t3_loop.trips) (v2063 : BitVec 32), Decidable (k1_chk12 k1_t3 v2063) := fun k1_t3 v2063 => decidable_of_iff' _ (Iff.of_eq (k1_chk12.eq_1 k1_t3 v2063))
theorem k1_mult49_dvd : ∀ (k1_t3 : Fin k1_t3_loop.trips) (v2063 : BitVec 32) (k1_hw12 : k1_chk12 k1_t3 v2063), 16 ∣ (k1_mult49 v2063).toNat := fun k1_t3 v2063 k1_hw12 => k1_hw12.1
theorem k1_off20_inb : ∀ (k1_t3 : Fin k1_t3_loop.trips) (v2063 : BitVec 32) (k1_hw12 : k1_chk12 k1_t3 v2063), ∀ (r : Fin 4), ∀ a, (k1_off20 k1_t3 v2063 (BitVec.ofNat 32 (16 * r.val))) a + S1x1x16.size a ≤ S2x50x128.size a := fun k1_t3 v2063 k1_hw12 r => k1_hw12.2.1 r
theorem k1_mult50_dvd : ∀ (k1_t3 : Fin k1_t3_loop.trips) (v2063 : BitVec 32) (k1_hw12 : k1_chk12 k1_t3 v2063), 16 ∣ (k1_mult50 v2063).toNat := fun k1_t3 v2063 k1_hw12 => k1_hw12.2.2.1
theorem k1_mult51_dvd : ∀ (k1_t3 : Fin k1_t3_loop.trips) (v2063 : BitVec 32) (k1_hw12 : k1_chk12 k1_t3 v2063), 16 ∣ (k1_mult51 v2063).toNat := fun k1_t3 v2063 k1_hw12 => k1_hw12.2.2.2.1
theorem k1_mult52_dvd : ∀ (k1_t3 : Fin k1_t3_loop.trips) (v2063 : BitVec 32) (k1_hw12 : k1_chk12 k1_t3 v2063), 16 ∣ (k1_mult52 v2063).toNat := fun k1_t3 v2063 k1_hw12 => k1_hw12.2.2.2.2

def k1_mult53 (v2099 : BitVec 32) : BitVec 32 :=
  let c0_i32_808 : BitVec 32 := 0#32
  let v2100 : BitVec 32 := Scalar.addi v2099 c0_i32_808
  v2100

def k1_off21 (k1_t3 : Fin k1_t3_loop.trips) (v2099 : BitVec 32) (c0_i32_808 : BitVec 32) : Fin 3 → Nat :=
  let c0_i32_809 : BitVec 32 := 0#32
  let v2102 : Index := Scalar.indexCast c0_i32_809
  let c0_i32_602 : BitVec 32 := 0#32
  let c1_i32_603 : BitVec 32 := 1#32
  let arg18 : BitVec 32 := Scf.iv c0_i32_602 c1_i32_603 k1_t3
  let c16_i32_807 : BitVec 32 := 16#32
  let v2096 : BitVec 32 := Scalar.muli arg18 c16_i32_807
  let c12_i32 : BitVec 32 := 12#32
  let v2097 : BitVec 32 := Scalar.addi v2096 c12_i32
  let v2103 : Index := Scalar.indexCast v2097
  let v2100 : BitVec 32 := Scalar.addi v2099 c0_i32_808
  let v2101 : BitVec 32 := v2100
  let v2104 : Index := Scalar.indexCast v2101
  ![0, v2103.toNat, v2104.toNat]
def k1_mult54 (v2099 : BitVec 32) : BitVec 32 :=
  let c16_i32_810 : BitVec 32 := 16#32
  let v2108 : BitVec 32 := Scalar.addi v2099 c16_i32_810
  v2108
def k1_mult55 (v2099 : BitVec 32) : BitVec 32 :=
  let c32_i32_812 : BitVec 32 := 32#32
  let v2116 : BitVec 32 := Scalar.addi v2099 c32_i32_812
  v2116
def k1_mult56 (v2099 : BitVec 32) : BitVec 32 :=
  let c48_i32_814 : BitVec 32 := 48#32
  let v2124 : BitVec 32 := Scalar.addi v2099 c48_i32_814
  v2124

def k1_chk13 (k1_t3 : Fin k1_t3_loop.trips) (v2099 : BitVec 32) : Prop :=
  (16 ∣ (k1_mult53 v2099).toNat) ∧
  (∀ (r : Fin 4), ∀ a, (k1_off21 k1_t3 v2099 (BitVec.ofNat 32 (16 * r.val))) a + S1x1x16.size a ≤ S2x50x128.size a) ∧
  (16 ∣ (k1_mult54 v2099).toNat) ∧
  (16 ∣ (k1_mult55 v2099).toNat) ∧
  (16 ∣ (k1_mult56 v2099).toNat)
instance k1_chk13.dec : ∀ (k1_t3 : Fin k1_t3_loop.trips) (v2099 : BitVec 32), Decidable (k1_chk13 k1_t3 v2099) := fun k1_t3 v2099 => decidable_of_iff' _ (Iff.of_eq (k1_chk13.eq_1 k1_t3 v2099))
theorem k1_mult53_dvd : ∀ (k1_t3 : Fin k1_t3_loop.trips) (v2099 : BitVec 32) (k1_hw13 : k1_chk13 k1_t3 v2099), 16 ∣ (k1_mult53 v2099).toNat := fun k1_t3 v2099 k1_hw13 => k1_hw13.1
theorem k1_off21_inb : ∀ (k1_t3 : Fin k1_t3_loop.trips) (v2099 : BitVec 32) (k1_hw13 : k1_chk13 k1_t3 v2099), ∀ (r : Fin 4), ∀ a, (k1_off21 k1_t3 v2099 (BitVec.ofNat 32 (16 * r.val))) a + S1x1x16.size a ≤ S2x50x128.size a := fun k1_t3 v2099 k1_hw13 r => k1_hw13.2.1 r
theorem k1_mult54_dvd : ∀ (k1_t3 : Fin k1_t3_loop.trips) (v2099 : BitVec 32) (k1_hw13 : k1_chk13 k1_t3 v2099), 16 ∣ (k1_mult54 v2099).toNat := fun k1_t3 v2099 k1_hw13 => k1_hw13.2.2.1
theorem k1_mult55_dvd : ∀ (k1_t3 : Fin k1_t3_loop.trips) (v2099 : BitVec 32) (k1_hw13 : k1_chk13 k1_t3 v2099), 16 ∣ (k1_mult55 v2099).toNat := fun k1_t3 v2099 k1_hw13 => k1_hw13.2.2.2.1
theorem k1_mult56_dvd : ∀ (k1_t3 : Fin k1_t3_loop.trips) (v2099 : BitVec 32) (k1_hw13 : k1_chk13 k1_t3 v2099), 16 ∣ (k1_mult56 v2099).toNat := fun k1_t3 v2099 k1_hw13 => k1_hw13.2.2.2.2

def k1_mult57 (v2135 : BitVec 32) : BitVec 32 :=
  let c0_i32_817 : BitVec 32 := 0#32
  let v2136 : BitVec 32 := Scalar.addi v2135 c0_i32_817
  v2136

def k1_off22 (k1_t3 : Fin k1_t3_loop.trips) (v2135 : BitVec 32) (c0_i32_817 : BitVec 32) : Fin 3 → Nat :=
  let c0_i32_818 : BitVec 32 := 0#32
  let v2138 : Index := Scalar.indexCast c0_i32_818
  let c0_i32_602 : BitVec 32 := 0#32
  let c1_i32_603 : BitVec 32 := 1#32
  let arg18 : BitVec 32 := Scf.iv c0_i32_602 c1_i32_603 k1_t3
  let c16_i32_816 : BitVec 32 := 16#32
  let v2132 : BitVec 32 := Scalar.muli arg18 c16_i32_816
  let c13_i32 : BitVec 32 := 13#32
  let v2133 : BitVec 32 := Scalar.addi v2132 c13_i32
  let v2139 : Index := Scalar.indexCast v2133
  let v2136 : BitVec 32 := Scalar.addi v2135 c0_i32_817
  let v2137 : BitVec 32 := v2136
  let v2140 : Index := Scalar.indexCast v2137
  ![0, v2139.toNat, v2140.toNat]
def k1_mult58 (v2135 : BitVec 32) : BitVec 32 :=
  let c16_i32_819 : BitVec 32 := 16#32
  let v2144 : BitVec 32 := Scalar.addi v2135 c16_i32_819
  v2144
def k1_mult59 (v2135 : BitVec 32) : BitVec 32 :=
  let c32_i32_821 : BitVec 32 := 32#32
  let v2152 : BitVec 32 := Scalar.addi v2135 c32_i32_821
  v2152
def k1_mult60 (v2135 : BitVec 32) : BitVec 32 :=
  let c48_i32_823 : BitVec 32 := 48#32
  let v2160 : BitVec 32 := Scalar.addi v2135 c48_i32_823
  v2160

def k1_chk14 (k1_t3 : Fin k1_t3_loop.trips) (v2135 : BitVec 32) : Prop :=
  (16 ∣ (k1_mult57 v2135).toNat) ∧
  (∀ (r : Fin 4), ∀ a, (k1_off22 k1_t3 v2135 (BitVec.ofNat 32 (16 * r.val))) a + S1x1x16.size a ≤ S2x50x128.size a) ∧
  (16 ∣ (k1_mult58 v2135).toNat) ∧
  (16 ∣ (k1_mult59 v2135).toNat) ∧
  (16 ∣ (k1_mult60 v2135).toNat)
instance k1_chk14.dec : ∀ (k1_t3 : Fin k1_t3_loop.trips) (v2135 : BitVec 32), Decidable (k1_chk14 k1_t3 v2135) := fun k1_t3 v2135 => decidable_of_iff' _ (Iff.of_eq (k1_chk14.eq_1 k1_t3 v2135))
theorem k1_mult57_dvd : ∀ (k1_t3 : Fin k1_t3_loop.trips) (v2135 : BitVec 32) (k1_hw14 : k1_chk14 k1_t3 v2135), 16 ∣ (k1_mult57 v2135).toNat := fun k1_t3 v2135 k1_hw14 => k1_hw14.1
theorem k1_off22_inb : ∀ (k1_t3 : Fin k1_t3_loop.trips) (v2135 : BitVec 32) (k1_hw14 : k1_chk14 k1_t3 v2135), ∀ (r : Fin 4), ∀ a, (k1_off22 k1_t3 v2135 (BitVec.ofNat 32 (16 * r.val))) a + S1x1x16.size a ≤ S2x50x128.size a := fun k1_t3 v2135 k1_hw14 r => k1_hw14.2.1 r
theorem k1_mult58_dvd : ∀ (k1_t3 : Fin k1_t3_loop.trips) (v2135 : BitVec 32) (k1_hw14 : k1_chk14 k1_t3 v2135), 16 ∣ (k1_mult58 v2135).toNat := fun k1_t3 v2135 k1_hw14 => k1_hw14.2.2.1
theorem k1_mult59_dvd : ∀ (k1_t3 : Fin k1_t3_loop.trips) (v2135 : BitVec 32) (k1_hw14 : k1_chk14 k1_t3 v2135), 16 ∣ (k1_mult59 v2135).toNat := fun k1_t3 v2135 k1_hw14 => k1_hw14.2.2.2.1
theorem k1_mult60_dvd : ∀ (k1_t3 : Fin k1_t3_loop.trips) (v2135 : BitVec 32) (k1_hw14 : k1_chk14 k1_t3 v2135), 16 ∣ (k1_mult60 v2135).toNat := fun k1_t3 v2135 k1_hw14 => k1_hw14.2.2.2.2

def k1_mult61 (v2171 : BitVec 32) : BitVec 32 :=
  let c0_i32_826 : BitVec 32 := 0#32
  let v2172 : BitVec 32 := Scalar.addi v2171 c0_i32_826
  v2172

def k1_off23 (k1_t3 : Fin k1_t3_loop.trips) (v2171 : BitVec 32) (c0_i32_826 : BitVec 32) : Fin 3 → Nat :=
  let c0_i32_827 : BitVec 32 := 0#32
  let v2174 : Index := Scalar.indexCast c0_i32_827
  let c0_i32_602 : BitVec 32 := 0#32
  let c1_i32_603 : BitVec 32 := 1#32
  let arg18 : BitVec 32 := Scf.iv c0_i32_602 c1_i32_603 k1_t3
  let c16_i32_825 : BitVec 32 := 16#32
  let v2168 : BitVec 32 := Scalar.muli arg18 c16_i32_825
  let c14_i32 : BitVec 32 := 14#32
  let v2169 : BitVec 32 := Scalar.addi v2168 c14_i32
  let v2175 : Index := Scalar.indexCast v2169
  let v2172 : BitVec 32 := Scalar.addi v2171 c0_i32_826
  let v2173 : BitVec 32 := v2172
  let v2176 : Index := Scalar.indexCast v2173
  ![0, v2175.toNat, v2176.toNat]
def k1_mult62 (v2171 : BitVec 32) : BitVec 32 :=
  let c16_i32_828 : BitVec 32 := 16#32
  let v2180 : BitVec 32 := Scalar.addi v2171 c16_i32_828
  v2180
def k1_mult63 (v2171 : BitVec 32) : BitVec 32 :=
  let c32_i32_830 : BitVec 32 := 32#32
  let v2188 : BitVec 32 := Scalar.addi v2171 c32_i32_830
  v2188
def k1_mult64 (v2171 : BitVec 32) : BitVec 32 :=
  let c48_i32_832 : BitVec 32 := 48#32
  let v2196 : BitVec 32 := Scalar.addi v2171 c48_i32_832
  v2196

def k1_chk15 (k1_t3 : Fin k1_t3_loop.trips) (v2171 : BitVec 32) : Prop :=
  (16 ∣ (k1_mult61 v2171).toNat) ∧
  (∀ (r : Fin 4), ∀ a, (k1_off23 k1_t3 v2171 (BitVec.ofNat 32 (16 * r.val))) a + S1x1x16.size a ≤ S2x50x128.size a) ∧
  (16 ∣ (k1_mult62 v2171).toNat) ∧
  (16 ∣ (k1_mult63 v2171).toNat) ∧
  (16 ∣ (k1_mult64 v2171).toNat)
instance k1_chk15.dec : ∀ (k1_t3 : Fin k1_t3_loop.trips) (v2171 : BitVec 32), Decidable (k1_chk15 k1_t3 v2171) := fun k1_t3 v2171 => decidable_of_iff' _ (Iff.of_eq (k1_chk15.eq_1 k1_t3 v2171))
theorem k1_mult61_dvd : ∀ (k1_t3 : Fin k1_t3_loop.trips) (v2171 : BitVec 32) (k1_hw15 : k1_chk15 k1_t3 v2171), 16 ∣ (k1_mult61 v2171).toNat := fun k1_t3 v2171 k1_hw15 => k1_hw15.1
theorem k1_off23_inb : ∀ (k1_t3 : Fin k1_t3_loop.trips) (v2171 : BitVec 32) (k1_hw15 : k1_chk15 k1_t3 v2171), ∀ (r : Fin 4), ∀ a, (k1_off23 k1_t3 v2171 (BitVec.ofNat 32 (16 * r.val))) a + S1x1x16.size a ≤ S2x50x128.size a := fun k1_t3 v2171 k1_hw15 r => k1_hw15.2.1 r
theorem k1_mult62_dvd : ∀ (k1_t3 : Fin k1_t3_loop.trips) (v2171 : BitVec 32) (k1_hw15 : k1_chk15 k1_t3 v2171), 16 ∣ (k1_mult62 v2171).toNat := fun k1_t3 v2171 k1_hw15 => k1_hw15.2.2.1
theorem k1_mult63_dvd : ∀ (k1_t3 : Fin k1_t3_loop.trips) (v2171 : BitVec 32) (k1_hw15 : k1_chk15 k1_t3 v2171), 16 ∣ (k1_mult63 v2171).toNat := fun k1_t3 v2171 k1_hw15 => k1_hw15.2.2.2.1
theorem k1_mult64_dvd : ∀ (k1_t3 : Fin k1_t3_loop.trips) (v2171 : BitVec 32) (k1_hw15 : k1_chk15 k1_t3 v2171), 16 ∣ (k1_mult64 v2171).toNat := fun k1_t3 v2171 k1_hw15 => k1_hw15.2.2.2.2

def k1_mult65 (v2207 : BitVec 32) : BitVec 32 :=
  let c0_i32_835 : BitVec 32 := 0#32
  let v2208 : BitVec 32 := Scalar.addi v2207 c0_i32_835
  v2208

def k1_off24 (k1_t3 : Fin k1_t3_loop.trips) (v2207 : BitVec 32) (c0_i32_835 : BitVec 32) : Fin 3 → Nat :=
  let c0_i32_836 : BitVec 32 := 0#32
  let v2210 : Index := Scalar.indexCast c0_i32_836
  let c0_i32_602 : BitVec 32 := 0#32
  let c1_i32_603 : BitVec 32 := 1#32
  let arg18 : BitVec 32 := Scf.iv c0_i32_602 c1_i32_603 k1_t3
  let c16_i32_834 : BitVec 32 := 16#32
  let v2204 : BitVec 32 := Scalar.muli arg18 c16_i32_834
  let c15_i32 : BitVec 32 := 15#32
  let v2205 : BitVec 32 := Scalar.addi v2204 c15_i32
  let v2211 : Index := Scalar.indexCast v2205
  let v2208 : BitVec 32 := Scalar.addi v2207 c0_i32_835
  let v2209 : BitVec 32 := v2208
  let v2212 : Index := Scalar.indexCast v2209
  ![0, v2211.toNat, v2212.toNat]
def k1_mult66 (v2207 : BitVec 32) : BitVec 32 :=
  let c16_i32_837 : BitVec 32 := 16#32
  let v2216 : BitVec 32 := Scalar.addi v2207 c16_i32_837
  v2216
def k1_mult67 (v2207 : BitVec 32) : BitVec 32 :=
  let c32_i32_839 : BitVec 32 := 32#32
  let v2224 : BitVec 32 := Scalar.addi v2207 c32_i32_839
  v2224
def k1_mult68 (v2207 : BitVec 32) : BitVec 32 :=
  let c48_i32_841 : BitVec 32 := 48#32
  let v2232 : BitVec 32 := Scalar.addi v2207 c48_i32_841
  v2232

def k1_chk16 (k1_t3 : Fin k1_t3_loop.trips) (v2207 : BitVec 32) : Prop :=
  (16 ∣ (k1_mult65 v2207).toNat) ∧
  (∀ (r : Fin 4), ∀ a, (k1_off24 k1_t3 v2207 (BitVec.ofNat 32 (16 * r.val))) a + S1x1x16.size a ≤ S2x50x128.size a) ∧
  (16 ∣ (k1_mult66 v2207).toNat) ∧
  (16 ∣ (k1_mult67 v2207).toNat) ∧
  (16 ∣ (k1_mult68 v2207).toNat)
instance k1_chk16.dec : ∀ (k1_t3 : Fin k1_t3_loop.trips) (v2207 : BitVec 32), Decidable (k1_chk16 k1_t3 v2207) := fun k1_t3 v2207 => decidable_of_iff' _ (Iff.of_eq (k1_chk16.eq_1 k1_t3 v2207))
theorem k1_mult65_dvd : ∀ (k1_t3 : Fin k1_t3_loop.trips) (v2207 : BitVec 32) (k1_hw16 : k1_chk16 k1_t3 v2207), 16 ∣ (k1_mult65 v2207).toNat := fun k1_t3 v2207 k1_hw16 => k1_hw16.1
theorem k1_off24_inb : ∀ (k1_t3 : Fin k1_t3_loop.trips) (v2207 : BitVec 32) (k1_hw16 : k1_chk16 k1_t3 v2207), ∀ (r : Fin 4), ∀ a, (k1_off24 k1_t3 v2207 (BitVec.ofNat 32 (16 * r.val))) a + S1x1x16.size a ≤ S2x50x128.size a := fun k1_t3 v2207 k1_hw16 r => k1_hw16.2.1 r
theorem k1_mult66_dvd : ∀ (k1_t3 : Fin k1_t3_loop.trips) (v2207 : BitVec 32) (k1_hw16 : k1_chk16 k1_t3 v2207), 16 ∣ (k1_mult66 v2207).toNat := fun k1_t3 v2207 k1_hw16 => k1_hw16.2.2.1
theorem k1_mult67_dvd : ∀ (k1_t3 : Fin k1_t3_loop.trips) (v2207 : BitVec 32) (k1_hw16 : k1_chk16 k1_t3 v2207), 16 ∣ (k1_mult67 v2207).toNat := fun k1_t3 v2207 k1_hw16 => k1_hw16.2.2.2.1
theorem k1_mult68_dvd : ∀ (k1_t3 : Fin k1_t3_loop.trips) (v2207 : BitVec 32) (k1_hw16 : k1_chk16 k1_t3 v2207), 16 ∣ (k1_mult68 v2207).toNat := fun k1_t3 v2207 k1_hw16 => k1_hw16.2.2.2.2

def k1_off25 (k1_t2 : Fin k1_t2_loop.trips) : Fin 1 → Nat :=
  let c0_i32_601 : BitVec 32 := 0#32
  let c0_i32_549 : BitVec 32 := 0#32
  let c1_i32_551 : BitVec 32 := 1#32
  let arg17 : BitVec 32 := Scf.iv c0_i32_549 c1_i32_551 k1_t2
  let c2_i32_583 : BitVec 32 := 2#32
  let v1428 : BitVec 32 := Scalar.muli arg17 c2_i32_583
  let c0_i32_584 : BitVec 32 := 0#32
  let v1429 : BitVec 32 := Scalar.addi v1428 c0_i32_584
  let c64_i32_600 : BitVec 32 := 64#32
  let v1446 : BitVec 32 := Scalar.muli v1429 c64_i32_600
  let v1447 : BitVec 32 := v1446
  let v1448 : BitVec 32 := Scalar.addi c0_i32_601 v1447
  let c48_i32 : BitVec 32 := 48#32
  let v1451 : BitVec 32 := Scalar.addi v1448 c48_i32
  let v1452 : Index := Scalar.indexCast v1451
  ![v1452.toNat]
def k1_mult69 (v1456 : BitVec 32) : BitVec 32 :=
  let c0_i32_605 : BitVec 32 := 0#32
  let v1457 : BitVec 32 := Scalar.addi v1456 c0_i32_605
  v1457

def k1_off26 (v1456 : BitVec 32) (c0_i32_605 : BitVec 32) : Fin 3 → Nat :=
  let c0_i32_606 : BitVec 32 := 0#32
  let v1459 : Index := Scalar.indexCast c0_i32_606
  let c48_i32_607 : BitVec 32 := 48#32
  let v1460 : Index := Scalar.indexCast c48_i32_607
  let v1457 : BitVec 32 := Scalar.addi v1456 c0_i32_605
  let v1458 : BitVec 32 := v1457
  let v1461 : Index := Scalar.indexCast v1458
  ![0, 48, v1461.toNat]
def k1_mult70 (v1456 : BitVec 32) : BitVec 32 :=
  let c16_i32_608 : BitVec 32 := 16#32
  let v1465 : BitVec 32 := Scalar.addi v1456 c16_i32_608
  v1465
def k1_mult71 (v1456 : BitVec 32) : BitVec 32 :=
  let c32_i32 : BitVec 32 := 32#32
  let v1473 : BitVec 32 := Scalar.addi v1456 c32_i32
  v1473
def k1_mult72 (v1456 : BitVec 32) : BitVec 32 :=
  let c48_i32_613 : BitVec 32 := 48#32
  let v1481 : BitVec 32 := Scalar.addi v1456 c48_i32_613
  v1481

def k1_chk17 (v1456 : BitVec 32) : Prop :=
  (16 ∣ (k1_mult69 v1456).toNat) ∧
  (∀ (r : Fin 4), ∀ a, (k1_off26 v1456 (BitVec.ofNat 32 (16 * r.val))) a + S1x1x16.size a ≤ S2x50x128.size a) ∧
  (16 ∣ (k1_mult70 v1456).toNat) ∧
  (16 ∣ (k1_mult71 v1456).toNat) ∧
  (16 ∣ (k1_mult72 v1456).toNat)
instance k1_chk17.dec : ∀ (v1456 : BitVec 32), Decidable (k1_chk17 v1456) := fun v1456 => decidable_of_iff' _ (Iff.of_eq (k1_chk17.eq_1 v1456))
theorem k1_mult69_dvd : ∀ (v1456 : BitVec 32) (k1_hw17 : k1_chk17 v1456), 16 ∣ (k1_mult69 v1456).toNat := fun v1456 k1_hw17 => k1_hw17.1
theorem k1_off26_inb : ∀ (v1456 : BitVec 32) (k1_hw17 : k1_chk17 v1456), ∀ (r : Fin 4), ∀ a, (k1_off26 v1456 (BitVec.ofNat 32 (16 * r.val))) a + S1x1x16.size a ≤ S2x50x128.size a := fun v1456 k1_hw17 r => k1_hw17.2.1 r
theorem k1_mult70_dvd : ∀ (v1456 : BitVec 32) (k1_hw17 : k1_chk17 v1456), 16 ∣ (k1_mult70 v1456).toNat := fun v1456 k1_hw17 => k1_hw17.2.2.1
theorem k1_mult71_dvd : ∀ (v1456 : BitVec 32) (k1_hw17 : k1_chk17 v1456), 16 ∣ (k1_mult71 v1456).toNat := fun v1456 k1_hw17 => k1_hw17.2.2.2.1
theorem k1_mult72_dvd : ∀ (v1456 : BitVec 32) (k1_hw17 : k1_chk17 v1456), 16 ∣ (k1_mult72 v1456).toNat := fun v1456 k1_hw17 => k1_hw17.2.2.2.2

def k1_mult73 (v1490 : BitVec 32) : BitVec 32 :=
  let c0_i32_616 : BitVec 32 := 0#32
  let v1491 : BitVec 32 := Scalar.addi v1490 c0_i32_616
  v1491

def k1_off27 (v1490 : BitVec 32) (c0_i32_616 : BitVec 32) : Fin 3 → Nat :=
  let c0_i32_617 : BitVec 32 := 0#32
  let v1493 : Index := Scalar.indexCast c0_i32_617
  let c49_i32 : BitVec 32 := 49#32
  let v1494 : Index := Scalar.indexCast c49_i32
  let v1491 : BitVec 32 := Scalar.addi v1490 c0_i32_616
  let v1492 : BitVec 32 := v1491
  let v1495 : Index := Scalar.indexCast v1492
  ![0, 49, v1495.toNat]
def k1_mult74 (v1490 : BitVec 32) : BitVec 32 :=
  let c16_i32_618 : BitVec 32 := 16#32
  let v1499 : BitVec 32 := Scalar.addi v1490 c16_i32_618
  v1499
def k1_mult75 (v1490 : BitVec 32) : BitVec 32 :=
  let c32_i32_621 : BitVec 32 := 32#32
  let v1507 : BitVec 32 := Scalar.addi v1490 c32_i32_621
  v1507
def k1_mult76 (v1490 : BitVec 32) : BitVec 32 :=
  let c48_i32_624 : BitVec 32 := 48#32
  let v1515 : BitVec 32 := Scalar.addi v1490 c48_i32_624
  v1515

def k1_chk18 (v1490 : BitVec 32) : Prop :=
  (16 ∣ (k1_mult73 v1490).toNat) ∧
  (∀ (r : Fin 4), ∀ a, (k1_off27 v1490 (BitVec.ofNat 32 (16 * r.val))) a + S1x1x16.size a ≤ S2x50x128.size a) ∧
  (16 ∣ (k1_mult74 v1490).toNat) ∧
  (16 ∣ (k1_mult75 v1490).toNat) ∧
  (16 ∣ (k1_mult76 v1490).toNat)
instance k1_chk18.dec : ∀ (v1490 : BitVec 32), Decidable (k1_chk18 v1490) := fun v1490 => decidable_of_iff' _ (Iff.of_eq (k1_chk18.eq_1 v1490))
theorem k1_mult73_dvd : ∀ (v1490 : BitVec 32) (k1_hw18 : k1_chk18 v1490), 16 ∣ (k1_mult73 v1490).toNat := fun v1490 k1_hw18 => k1_hw18.1
theorem k1_off27_inb : ∀ (v1490 : BitVec 32) (k1_hw18 : k1_chk18 v1490), ∀ (r : Fin 4), ∀ a, (k1_off27 v1490 (BitVec.ofNat 32 (16 * r.val))) a + S1x1x16.size a ≤ S2x50x128.size a := fun v1490 k1_hw18 r => k1_hw18.2.1 r
theorem k1_mult74_dvd : ∀ (v1490 : BitVec 32) (k1_hw18 : k1_chk18 v1490), 16 ∣ (k1_mult74 v1490).toNat := fun v1490 k1_hw18 => k1_hw18.2.2.1
theorem k1_mult75_dvd : ∀ (v1490 : BitVec 32) (k1_hw18 : k1_chk18 v1490), 16 ∣ (k1_mult75 v1490).toNat := fun v1490 k1_hw18 => k1_hw18.2.2.2.1
theorem k1_mult76_dvd : ∀ (v1490 : BitVec 32) (k1_hw18 : k1_chk18 v1490), 16 ∣ (k1_mult76 v1490).toNat := fun v1490 k1_hw18 => k1_hw18.2.2.2.2

def k1_off28 (k1_t2 : Fin k1_t2_loop.trips) : Fin 3 → Nat :=
  let c0_i32_627 : BitVec 32 := 0#32
  let v1523 : Index := Scalar.indexCast c0_i32_627
  let c0_i32_549 : BitVec 32 := 0#32
  let c1_i32_551 : BitVec 32 := 1#32
  let arg17 : BitVec 32 := Scf.iv c0_i32_549 c1_i32_551 k1_t2
  let c2_i32_583 : BitVec 32 := 2#32
  let v1428 : BitVec 32 := Scalar.muli arg17 c2_i32_583
  let c0_i32_584 : BitVec 32 := 0#32
  let v1429 : BitVec 32 := Scalar.addi v1428 c0_i32_584
  let v1524 : Index := Scalar.indexCast v1429
  let c0_628 : Index := 0#32
  ![0, v1524.toNat, 0]
def k1_off29 (k1_t2 : Fin k1_t2_loop.trips) : Fin 3 → Nat :=
  let c0_i32_629 : BitVec 32 := 0#32
  let v1528 : Index := Scalar.indexCast c0_i32_629
  let c0_i32_549 : BitVec 32 := 0#32
  let c1_i32_551 : BitVec 32 := 1#32
  let arg17 : BitVec 32 := Scf.iv c0_i32_549 c1_i32_551 k1_t2
  let c2_i32_583 : BitVec 32 := 2#32
  let v1428 : BitVec 32 := Scalar.muli arg17 c2_i32_583
  let c0_i32_584 : BitVec 32 := 0#32
  let v1429 : BitVec 32 := Scalar.addi v1428 c0_i32_584
  let v1529 : Index := Scalar.indexCast v1429
  let c16_630 : Index := 16#32
  ![0, v1529.toNat, 16]
def k1_off30 (k1_t2 : Fin k1_t2_loop.trips) : Fin 3 → Nat :=
  let c0_i32_631 : BitVec 32 := 0#32
  let v1533 : Index := Scalar.indexCast c0_i32_631
  let c0_i32_549 : BitVec 32 := 0#32
  let c1_i32_551 : BitVec 32 := 1#32
  let arg17 : BitVec 32 := Scf.iv c0_i32_549 c1_i32_551 k1_t2
  let c2_i32_583 : BitVec 32 := 2#32
  let v1428 : BitVec 32 := Scalar.muli arg17 c2_i32_583
  let c0_i32_584 : BitVec 32 := 0#32
  let v1429 : BitVec 32 := Scalar.addi v1428 c0_i32_584
  let v1534 : Index := Scalar.indexCast v1429
  let c32_632 : Index := 32#32
  ![0, v1534.toNat, 32]
def k1_off31 (k1_t2 : Fin k1_t2_loop.trips) : Fin 3 → Nat :=
  let c0_i32_633 : BitVec 32 := 0#32
  let v1538 : Index := Scalar.indexCast c0_i32_633
  let c0_i32_549 : BitVec 32 := 0#32
  let c1_i32_551 : BitVec 32 := 1#32
  let arg17 : BitVec 32 := Scf.iv c0_i32_549 c1_i32_551 k1_t2
  let c2_i32_583 : BitVec 32 := 2#32
  let v1428 : BitVec 32 := Scalar.muli arg17 c2_i32_583
  let c0_i32_584 : BitVec 32 := 0#32
  let v1429 : BitVec 32 := Scalar.addi v1428 c0_i32_584
  let v1539 : Index := Scalar.indexCast v1429
  let c48_634 : Index := 48#32
  ![0, v1539.toNat, 48]
def k1_mult77 (k1_t2 : Fin k1_t2_loop.trips) : BitVec 32 :=
  let c0_i32_549 : BitVec 32 := 0#32
  let c1_i32_551 : BitVec 32 := 1#32
  let arg17 : BitVec 32 := Scf.iv c0_i32_549 c1_i32_551 k1_t2
  let c2_i32_635 : BitVec 32 := 2#32
  let v1543 : BitVec 32 := Scalar.muli arg17 c2_i32_635
  let c1_i32_636 : BitVec 32 := 1#32
  let v1544 : BitVec 32 := Scalar.addi v1543 c1_i32_636
  let c64_i32_637 : BitVec 32 := 64#32
  let v1545 : BitVec 32 := Scalar.muli v1544 c64_i32_637
  v1545
def k1_off32 (k1_t2 : Fin k1_t2_loop.trips) : Fin 1 → Nat :=
  let c0_i32_638 : BitVec 32 := 0#32
  let c0_i32_549 : BitVec 32 := 0#32
  let c1_i32_551 : BitVec 32 := 1#32
  let arg17 : BitVec 32 := Scf.iv c0_i32_549 c1_i32_551 k1_t2
  let c2_i32_635 : BitVec 32 := 2#32
  let v1543 : BitVec 32 := Scalar.muli arg17 c2_i32_635
  let c1_i32_636 : BitVec 32 := 1#32
  let v1544 : BitVec 32 := Scalar.addi v1543 c1_i32_636
  let c64_i32_637 : BitVec 32 := 64#32
  let v1545 : BitVec 32 := Scalar.muli v1544 c64_i32_637
  let v1546 : BitVec 32 := v1545
  let v1547 : BitVec 32 := Scalar.addi c0_i32_638 v1546
  ![v1547.toNat]
def k1_cond4 (k1_t2 : Fin k1_t2_loop.trips) : BitVec 1 :=
  let c0_i32_549 : BitVec 32 := 0#32
  let c1_i32_551 : BitVec 32 := 1#32
  let arg17 : BitVec 32 := Scf.iv c0_i32_549 c1_i32_551 k1_t2
  let c7_i32_644 : BitVec 32 := 7#32
  let v1552 : BitVec 1 := Scalar.cmpi .slt arg17 c7_i32_644
  let v1553 : BitVec 32 := Scalar.extui v1552
  let c0_i32_645 : BitVec 32 := 0#32
  let v1554 : BitVec 1 := Scalar.cmpi .ne v1553 c0_i32_645
  v1554

def k1_mult78 (k1_t2 : Fin k1_t2_loop.trips) : BitVec 32 :=
  let c0_i32_549 : BitVec 32 := 0#32
  let c1_i32_551 : BitVec 32 := 1#32
  let arg17 : BitVec 32 := Scf.iv c0_i32_549 c1_i32_551 k1_t2
  let c2_i32_635 : BitVec 32 := 2#32
  let v1543 : BitVec 32 := Scalar.muli arg17 c2_i32_635
  let c1_i32_636 : BitVec 32 := 1#32
  let v1544 : BitVec 32 := Scalar.addi v1543 c1_i32_636
  let c1_i32_690 : BitVec 32 := 1#32
  let v1659 : BitVec 32 := Scalar.addi v1544 c1_i32_690
  let c64_i32_691 : BitVec 32 := 64#32
  let v1660 : BitVec 32 := Scalar.muli v1659 c64_i32_691
  v1660
def k1_off33 (k1_t2 : Fin k1_t2_loop.trips) : Fin 1 → Nat :=
  let c0_i32_692 : BitVec 32 := 0#32
  let c0_i32_549 : BitVec 32 := 0#32
  let c1_i32_551 : BitVec 32 := 1#32
  let arg17 : BitVec 32 := Scf.iv c0_i32_549 c1_i32_551 k1_t2
  let c2_i32_635 : BitVec 32 := 2#32
  let v1543 : BitVec 32 := Scalar.muli arg17 c2_i32_635
  let c1_i32_636 : BitVec 32 := 1#32
  let v1544 : BitVec 32 := Scalar.addi v1543 c1_i32_636
  let c1_i32_690 : BitVec 32 := 1#32
  let v1659 : BitVec 32 := Scalar.addi v1544 c1_i32_690
  let c64_i32_691 : BitVec 32 := 64#32
  let v1660 : BitVec 32 := Scalar.muli v1659 c64_i32_691
  let v1661 : BitVec 32 := v1660
  let v1662 : BitVec 32 := Scalar.addi c0_i32_692 v1661
  ![v1662.toNat]
def k1_cond5 (k1_t1 : Fin k1_t1_loop.trips) (k1_t2 : Fin k1_t2_loop.trips) : BitVec 1 :=
  let c0_i32_549 : BitVec 32 := 0#32
  let c1_i32_551 : BitVec 32 := 1#32
  let arg17 : BitVec 32 := Scf.iv c0_i32_549 c1_i32_551 k1_t2
  let c7_i32_646 : BitVec 32 := 7#32
  let v1555 : BitVec 1 := Scalar.cmpi .eq arg17 c7_i32_646
  let c0_i32_522 : BitVec 32 := 0#32
  let c1_i32_523 : BitVec 32 := 1#32
  let arg16 : BitVec 32 := Scf.iv c0_i32_522 c1_i32_523 k1_t1
  let c2_i32_539 : BitVec 32 := 2#32
  let v1384 : BitVec 32 := Scalar.muli arg16 c2_i32_539
  let c0_i32_540 : BitVec 32 := 0#32
  let v1385 : BitVec 32 := Scalar.addi v1384 c0_i32_540
  let c1_i32_647 : BitVec 32 := 1#32
  let v1556 : BitVec 32 := Scalar.addi v1385 c1_i32_647
  let c8_i32_648 : BitVec 32 := 8#32
  let v1557 : BitVec 1 := Scalar.cmpi .slt v1556 c8_i32_648
  let v1558 : BitVec 1 := Scalar.andi v1555 v1557
  let v1559 : BitVec 32 := Scalar.extui v1558
  let c0_i32_649 : BitVec 32 := 0#32
  let v1560 : BitVec 1 := Scalar.cmpi .ne v1559 c0_i32_649
  v1560

def k1_mult79 : BitVec 32 :=
  let c0_i32_690 : BitVec 32 := 0#32
  c0_i32_690
def k1_off34 : Fin 1 → Nat :=
  let c1024_i32_691 : BitVec 32 := 1024#32
  let c0_i32_690 : BitVec 32 := 0#32
  let v1659 : BitVec 32 := c0_i32_690
  let v1660 : BitVec 32 := Scalar.addi c1024_i32_691 v1659
  ![v1660.toNat]
def k1_mult80 (k1_t2 : Fin k1_t2_loop.trips) : BitVec 32 :=
  let c0_i32_549 : BitVec 32 := 0#32
  let c1_i32_551 : BitVec 32 := 1#32
  let arg17 : BitVec 32 := Scf.iv c0_i32_549 c1_i32_551 k1_t2
  let c2_i32_635 : BitVec 32 := 2#32
  let v1543 : BitVec 32 := Scalar.muli arg17 c2_i32_635
  let c1_i32_636 : BitVec 32 := 1#32
  let v1544 : BitVec 32 := Scalar.addi v1543 c1_i32_636
  let c64_i32_651 : BitVec 32 := 64#32
  let v1562 : BitVec 32 := Scalar.muli v1544 c64_i32_651
  v1562
@[reducible] def k1_t4_loop : Scf.Loop 32 :=
  let c0_i32_653 : BitVec 32 := 0#32
  let c3_i32_654 : BitVec 32 := 3#32
  let v1565 : BitVec 32 := Scalar.addi c0_i32_653 c3_i32_654
  let c1_i32_655 : BitVec 32 := 1#32
  ⟨c0_i32_653, v1565, c1_i32_655⟩
def k1_off35 (k1_t2 : Fin k1_t2_loop.trips) (k1_t4 : Fin k1_t4_loop.trips) : Fin 1 → Nat :=
  let c0_i32_652 : BitVec 32 := 0#32
  let c0_i32_549 : BitVec 32 := 0#32
  let c1_i32_551 : BitVec 32 := 1#32
  let arg17 : BitVec 32 := Scf.iv c0_i32_549 c1_i32_551 k1_t2
  let c2_i32_635 : BitVec 32 := 2#32
  let v1543 : BitVec 32 := Scalar.muli arg17 c2_i32_635
  let c1_i32_636 : BitVec 32 := 1#32
  let v1544 : BitVec 32 := Scalar.addi v1543 c1_i32_636
  let c64_i32_651 : BitVec 32 := 64#32
  let v1562 : BitVec 32 := Scalar.muli v1544 c64_i32_651
  let v1563 : BitVec 32 := v1562
  let v1564 : BitVec 32 := Scalar.addi c0_i32_652 v1563
  let c0_i32_653 : BitVec 32 := 0#32
  let c1_i32_655 : BitVec 32 := 1#32
  let arg18 : BitVec 32 := Scf.iv c0_i32_653 c1_i32_655 k1_t4
  let c16_i32_690 : BitVec 32 := 16#32
  let v1659 : BitVec 32 := Scalar.muli arg18 c16_i32_690
  let v1660 : BitVec 32 := Scalar.addi v1564 v1659
  let v1661 : Index := Scalar.indexCast v1660
  ![v1661.toNat]
def k1_mult81 (v1667 : BitVec 32) : BitVec 32 :=
  let c0_i32_693 : BitVec 32 := 0#32
  let v1668 : BitVec 32 := Scalar.addi v1667 c0_i32_693
  v1668

def k1_off36 (k1_t4 : Fin k1_t4_loop.trips) (v1667 : BitVec 32) (c0_i32_693 : BitVec 32) : Fin 3 → Nat :=
  let c1_i32_694 : BitVec 32 := 1#32
  let v1670 : Index := Scalar.indexCast c1_i32_694
  let c0_i32_653 : BitVec 32 := 0#32
  let c1_i32_655 : BitVec 32 := 1#32
  let arg18 : BitVec 32 := Scf.iv c0_i32_653 c1_i32_655 k1_t4
  let c16_i32_691 : BitVec 32 := 16#32
  let v1664 : BitVec 32 := Scalar.muli arg18 c16_i32_691
  let c0_i32_692 : BitVec 32 := 0#32
  let v1665 : BitVec 32 := Scalar.addi v1664 c0_i32_692
  let v1671 : Index := Scalar.indexCast v1665
  let v1668 : BitVec 32 := Scalar.addi v1667 c0_i32_693
  let v1669 : BitVec 32 := v1668
  let v1672 : Index := Scalar.indexCast v1669
  ![1, v1671.toNat, v1672.toNat]
def k1_mult82 (v1667 : BitVec 32) : BitVec 32 :=
  let c16_i32_695 : BitVec 32 := 16#32
  let v1676 : BitVec 32 := Scalar.addi v1667 c16_i32_695
  v1676
def k1_mult83 (v1667 : BitVec 32) : BitVec 32 :=
  let c32_i32_697 : BitVec 32 := 32#32
  let v1684 : BitVec 32 := Scalar.addi v1667 c32_i32_697
  v1684
def k1_mult84 (v1667 : BitVec 32) : BitVec 32 :=
  let c48_i32_699 : BitVec 32 := 48#32
  let v1692 : BitVec 32 := Scalar.addi v1667 c48_i32_699
  v1692

def k1_chk19 (k1_t4 : Fin k1_t4_loop.trips) (v1667 : BitVec 32) : Prop :=
  (16 ∣ (k1_mult81 v1667).toNat) ∧
  (∀ (r : Fin 4), ∀ a, (k1_off36 k1_t4 v1667 (BitVec.ofNat 32 (16 * r.val))) a + S1x1x16.size a ≤ S2x50x128.size a) ∧
  (16 ∣ (k1_mult82 v1667).toNat) ∧
  (16 ∣ (k1_mult83 v1667).toNat) ∧
  (16 ∣ (k1_mult84 v1667).toNat)
instance k1_chk19.dec : ∀ (k1_t4 : Fin k1_t4_loop.trips) (v1667 : BitVec 32), Decidable (k1_chk19 k1_t4 v1667) := fun k1_t4 v1667 => decidable_of_iff' _ (Iff.of_eq (k1_chk19.eq_1 k1_t4 v1667))
theorem k1_mult81_dvd : ∀ (k1_t4 : Fin k1_t4_loop.trips) (v1667 : BitVec 32) (k1_hw19 : k1_chk19 k1_t4 v1667), 16 ∣ (k1_mult81 v1667).toNat := fun k1_t4 v1667 k1_hw19 => k1_hw19.1
theorem k1_off36_inb : ∀ (k1_t4 : Fin k1_t4_loop.trips) (v1667 : BitVec 32) (k1_hw19 : k1_chk19 k1_t4 v1667), ∀ (r : Fin 4), ∀ a, (k1_off36 k1_t4 v1667 (BitVec.ofNat 32 (16 * r.val))) a + S1x1x16.size a ≤ S2x50x128.size a := fun k1_t4 v1667 k1_hw19 r => k1_hw19.2.1 r
theorem k1_mult82_dvd : ∀ (k1_t4 : Fin k1_t4_loop.trips) (v1667 : BitVec 32) (k1_hw19 : k1_chk19 k1_t4 v1667), 16 ∣ (k1_mult82 v1667).toNat := fun k1_t4 v1667 k1_hw19 => k1_hw19.2.2.1
theorem k1_mult83_dvd : ∀ (k1_t4 : Fin k1_t4_loop.trips) (v1667 : BitVec 32) (k1_hw19 : k1_chk19 k1_t4 v1667), 16 ∣ (k1_mult83 v1667).toNat := fun k1_t4 v1667 k1_hw19 => k1_hw19.2.2.2.1
theorem k1_mult84_dvd : ∀ (k1_t4 : Fin k1_t4_loop.trips) (v1667 : BitVec 32) (k1_hw19 : k1_chk19 k1_t4 v1667), 16 ∣ (k1_mult84 v1667).toNat := fun k1_t4 v1667 k1_hw19 => k1_hw19.2.2.2.2

def k1_mult85 (v1703 : BitVec 32) : BitVec 32 :=
  let c0_i32_703 : BitVec 32 := 0#32
  let v1704 : BitVec 32 := Scalar.addi v1703 c0_i32_703
  v1704

def k1_off37 (k1_t4 : Fin k1_t4_loop.trips) (v1703 : BitVec 32) (c0_i32_703 : BitVec 32) : Fin 3 → Nat :=
  let c1_i32_704 : BitVec 32 := 1#32
  let v1706 : Index := Scalar.indexCast c1_i32_704
  let c0_i32_653 : BitVec 32 := 0#32
  let c1_i32_655 : BitVec 32 := 1#32
  let arg18 : BitVec 32 := Scf.iv c0_i32_653 c1_i32_655 k1_t4
  let c16_i32_701 : BitVec 32 := 16#32
  let v1700 : BitVec 32 := Scalar.muli arg18 c16_i32_701
  let c1_i32_702 : BitVec 32 := 1#32
  let v1701 : BitVec 32 := Scalar.addi v1700 c1_i32_702
  let v1707 : Index := Scalar.indexCast v1701
  let v1704 : BitVec 32 := Scalar.addi v1703 c0_i32_703
  let v1705 : BitVec 32 := v1704
  let v1708 : Index := Scalar.indexCast v1705
  ![1, v1707.toNat, v1708.toNat]
def k1_mult86 (v1703 : BitVec 32) : BitVec 32 :=
  let c16_i32_705 : BitVec 32 := 16#32
  let v1712 : BitVec 32 := Scalar.addi v1703 c16_i32_705
  v1712
def k1_mult87 (v1703 : BitVec 32) : BitVec 32 :=
  let c32_i32_707 : BitVec 32 := 32#32
  let v1720 : BitVec 32 := Scalar.addi v1703 c32_i32_707
  v1720
def k1_mult88 (v1703 : BitVec 32) : BitVec 32 :=
  let c48_i32_709 : BitVec 32 := 48#32
  let v1728 : BitVec 32 := Scalar.addi v1703 c48_i32_709
  v1728

def k1_chk20 (k1_t4 : Fin k1_t4_loop.trips) (v1703 : BitVec 32) : Prop :=
  (16 ∣ (k1_mult85 v1703).toNat) ∧
  (∀ (r : Fin 4), ∀ a, (k1_off37 k1_t4 v1703 (BitVec.ofNat 32 (16 * r.val))) a + S1x1x16.size a ≤ S2x50x128.size a) ∧
  (16 ∣ (k1_mult86 v1703).toNat) ∧
  (16 ∣ (k1_mult87 v1703).toNat) ∧
  (16 ∣ (k1_mult88 v1703).toNat)
instance k1_chk20.dec : ∀ (k1_t4 : Fin k1_t4_loop.trips) (v1703 : BitVec 32), Decidable (k1_chk20 k1_t4 v1703) := fun k1_t4 v1703 => decidable_of_iff' _ (Iff.of_eq (k1_chk20.eq_1 k1_t4 v1703))
theorem k1_mult85_dvd : ∀ (k1_t4 : Fin k1_t4_loop.trips) (v1703 : BitVec 32) (k1_hw20 : k1_chk20 k1_t4 v1703), 16 ∣ (k1_mult85 v1703).toNat := fun k1_t4 v1703 k1_hw20 => k1_hw20.1
theorem k1_off37_inb : ∀ (k1_t4 : Fin k1_t4_loop.trips) (v1703 : BitVec 32) (k1_hw20 : k1_chk20 k1_t4 v1703), ∀ (r : Fin 4), ∀ a, (k1_off37 k1_t4 v1703 (BitVec.ofNat 32 (16 * r.val))) a + S1x1x16.size a ≤ S2x50x128.size a := fun k1_t4 v1703 k1_hw20 r => k1_hw20.2.1 r
theorem k1_mult86_dvd : ∀ (k1_t4 : Fin k1_t4_loop.trips) (v1703 : BitVec 32) (k1_hw20 : k1_chk20 k1_t4 v1703), 16 ∣ (k1_mult86 v1703).toNat := fun k1_t4 v1703 k1_hw20 => k1_hw20.2.2.1
theorem k1_mult87_dvd : ∀ (k1_t4 : Fin k1_t4_loop.trips) (v1703 : BitVec 32) (k1_hw20 : k1_chk20 k1_t4 v1703), 16 ∣ (k1_mult87 v1703).toNat := fun k1_t4 v1703 k1_hw20 => k1_hw20.2.2.2.1
theorem k1_mult88_dvd : ∀ (k1_t4 : Fin k1_t4_loop.trips) (v1703 : BitVec 32) (k1_hw20 : k1_chk20 k1_t4 v1703), 16 ∣ (k1_mult88 v1703).toNat := fun k1_t4 v1703 k1_hw20 => k1_hw20.2.2.2.2

def k1_mult89 (v1739 : BitVec 32) : BitVec 32 :=
  let c0_i32_713 : BitVec 32 := 0#32
  let v1740 : BitVec 32 := Scalar.addi v1739 c0_i32_713
  v1740

def k1_off38 (k1_t4 : Fin k1_t4_loop.trips) (v1739 : BitVec 32) (c0_i32_713 : BitVec 32) : Fin 3 → Nat :=
  let c1_i32_714 : BitVec 32 := 1#32
  let v1742 : Index := Scalar.indexCast c1_i32_714
  let c0_i32_653 : BitVec 32 := 0#32
  let c1_i32_655 : BitVec 32 := 1#32
  let arg18 : BitVec 32 := Scf.iv c0_i32_653 c1_i32_655 k1_t4
  let c16_i32_711 : BitVec 32 := 16#32
  let v1736 : BitVec 32 := Scalar.muli arg18 c16_i32_711
  let c2_i32_712 : BitVec 32 := 2#32
  let v1737 : BitVec 32 := Scalar.addi v1736 c2_i32_712
  let v1743 : Index := Scalar.indexCast v1737
  let v1740 : BitVec 32 := Scalar.addi v1739 c0_i32_713
  let v1741 : BitVec 32 := v1740
  let v1744 : Index := Scalar.indexCast v1741
  ![1, v1743.toNat, v1744.toNat]
def k1_mult90 (v1739 : BitVec 32) : BitVec 32 :=
  let c16_i32_715 : BitVec 32 := 16#32
  let v1748 : BitVec 32 := Scalar.addi v1739 c16_i32_715
  v1748
def k1_mult91 (v1739 : BitVec 32) : BitVec 32 :=
  let c32_i32_717 : BitVec 32 := 32#32
  let v1756 : BitVec 32 := Scalar.addi v1739 c32_i32_717
  v1756
def k1_mult92 (v1739 : BitVec 32) : BitVec 32 :=
  let c48_i32_719 : BitVec 32 := 48#32
  let v1764 : BitVec 32 := Scalar.addi v1739 c48_i32_719
  v1764

def k1_chk21 (k1_t4 : Fin k1_t4_loop.trips) (v1739 : BitVec 32) : Prop :=
  (16 ∣ (k1_mult89 v1739).toNat) ∧
  (∀ (r : Fin 4), ∀ a, (k1_off38 k1_t4 v1739 (BitVec.ofNat 32 (16 * r.val))) a + S1x1x16.size a ≤ S2x50x128.size a) ∧
  (16 ∣ (k1_mult90 v1739).toNat) ∧
  (16 ∣ (k1_mult91 v1739).toNat) ∧
  (16 ∣ (k1_mult92 v1739).toNat)
instance k1_chk21.dec : ∀ (k1_t4 : Fin k1_t4_loop.trips) (v1739 : BitVec 32), Decidable (k1_chk21 k1_t4 v1739) := fun k1_t4 v1739 => decidable_of_iff' _ (Iff.of_eq (k1_chk21.eq_1 k1_t4 v1739))
theorem k1_mult89_dvd : ∀ (k1_t4 : Fin k1_t4_loop.trips) (v1739 : BitVec 32) (k1_hw21 : k1_chk21 k1_t4 v1739), 16 ∣ (k1_mult89 v1739).toNat := fun k1_t4 v1739 k1_hw21 => k1_hw21.1
theorem k1_off38_inb : ∀ (k1_t4 : Fin k1_t4_loop.trips) (v1739 : BitVec 32) (k1_hw21 : k1_chk21 k1_t4 v1739), ∀ (r : Fin 4), ∀ a, (k1_off38 k1_t4 v1739 (BitVec.ofNat 32 (16 * r.val))) a + S1x1x16.size a ≤ S2x50x128.size a := fun k1_t4 v1739 k1_hw21 r => k1_hw21.2.1 r
theorem k1_mult90_dvd : ∀ (k1_t4 : Fin k1_t4_loop.trips) (v1739 : BitVec 32) (k1_hw21 : k1_chk21 k1_t4 v1739), 16 ∣ (k1_mult90 v1739).toNat := fun k1_t4 v1739 k1_hw21 => k1_hw21.2.2.1
theorem k1_mult91_dvd : ∀ (k1_t4 : Fin k1_t4_loop.trips) (v1739 : BitVec 32) (k1_hw21 : k1_chk21 k1_t4 v1739), 16 ∣ (k1_mult91 v1739).toNat := fun k1_t4 v1739 k1_hw21 => k1_hw21.2.2.2.1
theorem k1_mult92_dvd : ∀ (k1_t4 : Fin k1_t4_loop.trips) (v1739 : BitVec 32) (k1_hw21 : k1_chk21 k1_t4 v1739), 16 ∣ (k1_mult92 v1739).toNat := fun k1_t4 v1739 k1_hw21 => k1_hw21.2.2.2.2

def k1_mult93 (v1775 : BitVec 32) : BitVec 32 :=
  let c0_i32_723 : BitVec 32 := 0#32
  let v1776 : BitVec 32 := Scalar.addi v1775 c0_i32_723
  v1776

def k1_off39 (k1_t4 : Fin k1_t4_loop.trips) (v1775 : BitVec 32) (c0_i32_723 : BitVec 32) : Fin 3 → Nat :=
  let c1_i32_724 : BitVec 32 := 1#32
  let v1778 : Index := Scalar.indexCast c1_i32_724
  let c0_i32_653 : BitVec 32 := 0#32
  let c1_i32_655 : BitVec 32 := 1#32
  let arg18 : BitVec 32 := Scf.iv c0_i32_653 c1_i32_655 k1_t4
  let c16_i32_721 : BitVec 32 := 16#32
  let v1772 : BitVec 32 := Scalar.muli arg18 c16_i32_721
  let c3_i32_722 : BitVec 32 := 3#32
  let v1773 : BitVec 32 := Scalar.addi v1772 c3_i32_722
  let v1779 : Index := Scalar.indexCast v1773
  let v1776 : BitVec 32 := Scalar.addi v1775 c0_i32_723
  let v1777 : BitVec 32 := v1776
  let v1780 : Index := Scalar.indexCast v1777
  ![1, v1779.toNat, v1780.toNat]
def k1_mult94 (v1775 : BitVec 32) : BitVec 32 :=
  let c16_i32_725 : BitVec 32 := 16#32
  let v1784 : BitVec 32 := Scalar.addi v1775 c16_i32_725
  v1784
def k1_mult95 (v1775 : BitVec 32) : BitVec 32 :=
  let c32_i32_727 : BitVec 32 := 32#32
  let v1792 : BitVec 32 := Scalar.addi v1775 c32_i32_727
  v1792
def k1_mult96 (v1775 : BitVec 32) : BitVec 32 :=
  let c48_i32_729 : BitVec 32 := 48#32
  let v1800 : BitVec 32 := Scalar.addi v1775 c48_i32_729
  v1800

def k1_chk22 (k1_t4 : Fin k1_t4_loop.trips) (v1775 : BitVec 32) : Prop :=
  (16 ∣ (k1_mult93 v1775).toNat) ∧
  (∀ (r : Fin 4), ∀ a, (k1_off39 k1_t4 v1775 (BitVec.ofNat 32 (16 * r.val))) a + S1x1x16.size a ≤ S2x50x128.size a) ∧
  (16 ∣ (k1_mult94 v1775).toNat) ∧
  (16 ∣ (k1_mult95 v1775).toNat) ∧
  (16 ∣ (k1_mult96 v1775).toNat)
instance k1_chk22.dec : ∀ (k1_t4 : Fin k1_t4_loop.trips) (v1775 : BitVec 32), Decidable (k1_chk22 k1_t4 v1775) := fun k1_t4 v1775 => decidable_of_iff' _ (Iff.of_eq (k1_chk22.eq_1 k1_t4 v1775))
theorem k1_mult93_dvd : ∀ (k1_t4 : Fin k1_t4_loop.trips) (v1775 : BitVec 32) (k1_hw22 : k1_chk22 k1_t4 v1775), 16 ∣ (k1_mult93 v1775).toNat := fun k1_t4 v1775 k1_hw22 => k1_hw22.1
theorem k1_off39_inb : ∀ (k1_t4 : Fin k1_t4_loop.trips) (v1775 : BitVec 32) (k1_hw22 : k1_chk22 k1_t4 v1775), ∀ (r : Fin 4), ∀ a, (k1_off39 k1_t4 v1775 (BitVec.ofNat 32 (16 * r.val))) a + S1x1x16.size a ≤ S2x50x128.size a := fun k1_t4 v1775 k1_hw22 r => k1_hw22.2.1 r
theorem k1_mult94_dvd : ∀ (k1_t4 : Fin k1_t4_loop.trips) (v1775 : BitVec 32) (k1_hw22 : k1_chk22 k1_t4 v1775), 16 ∣ (k1_mult94 v1775).toNat := fun k1_t4 v1775 k1_hw22 => k1_hw22.2.2.1
theorem k1_mult95_dvd : ∀ (k1_t4 : Fin k1_t4_loop.trips) (v1775 : BitVec 32) (k1_hw22 : k1_chk22 k1_t4 v1775), 16 ∣ (k1_mult95 v1775).toNat := fun k1_t4 v1775 k1_hw22 => k1_hw22.2.2.2.1
theorem k1_mult96_dvd : ∀ (k1_t4 : Fin k1_t4_loop.trips) (v1775 : BitVec 32) (k1_hw22 : k1_chk22 k1_t4 v1775), 16 ∣ (k1_mult96 v1775).toNat := fun k1_t4 v1775 k1_hw22 => k1_hw22.2.2.2.2

def k1_mult97 (v1811 : BitVec 32) : BitVec 32 :=
  let c0_i32_733 : BitVec 32 := 0#32
  let v1812 : BitVec 32 := Scalar.addi v1811 c0_i32_733
  v1812

def k1_off40 (k1_t4 : Fin k1_t4_loop.trips) (v1811 : BitVec 32) (c0_i32_733 : BitVec 32) : Fin 3 → Nat :=
  let c1_i32_734 : BitVec 32 := 1#32
  let v1814 : Index := Scalar.indexCast c1_i32_734
  let c0_i32_653 : BitVec 32 := 0#32
  let c1_i32_655 : BitVec 32 := 1#32
  let arg18 : BitVec 32 := Scf.iv c0_i32_653 c1_i32_655 k1_t4
  let c16_i32_731 : BitVec 32 := 16#32
  let v1808 : BitVec 32 := Scalar.muli arg18 c16_i32_731
  let c4_i32_732 : BitVec 32 := 4#32
  let v1809 : BitVec 32 := Scalar.addi v1808 c4_i32_732
  let v1815 : Index := Scalar.indexCast v1809
  let v1812 : BitVec 32 := Scalar.addi v1811 c0_i32_733
  let v1813 : BitVec 32 := v1812
  let v1816 : Index := Scalar.indexCast v1813
  ![1, v1815.toNat, v1816.toNat]
def k1_mult98 (v1811 : BitVec 32) : BitVec 32 :=
  let c16_i32_735 : BitVec 32 := 16#32
  let v1820 : BitVec 32 := Scalar.addi v1811 c16_i32_735
  v1820
def k1_mult99 (v1811 : BitVec 32) : BitVec 32 :=
  let c32_i32_737 : BitVec 32 := 32#32
  let v1828 : BitVec 32 := Scalar.addi v1811 c32_i32_737
  v1828
def k1_mult100 (v1811 : BitVec 32) : BitVec 32 :=
  let c48_i32_739 : BitVec 32 := 48#32
  let v1836 : BitVec 32 := Scalar.addi v1811 c48_i32_739
  v1836

def k1_chk23 (k1_t4 : Fin k1_t4_loop.trips) (v1811 : BitVec 32) : Prop :=
  (16 ∣ (k1_mult97 v1811).toNat) ∧
  (∀ (r : Fin 4), ∀ a, (k1_off40 k1_t4 v1811 (BitVec.ofNat 32 (16 * r.val))) a + S1x1x16.size a ≤ S2x50x128.size a) ∧
  (16 ∣ (k1_mult98 v1811).toNat) ∧
  (16 ∣ (k1_mult99 v1811).toNat) ∧
  (16 ∣ (k1_mult100 v1811).toNat)
instance k1_chk23.dec : ∀ (k1_t4 : Fin k1_t4_loop.trips) (v1811 : BitVec 32), Decidable (k1_chk23 k1_t4 v1811) := fun k1_t4 v1811 => decidable_of_iff' _ (Iff.of_eq (k1_chk23.eq_1 k1_t4 v1811))
theorem k1_mult97_dvd : ∀ (k1_t4 : Fin k1_t4_loop.trips) (v1811 : BitVec 32) (k1_hw23 : k1_chk23 k1_t4 v1811), 16 ∣ (k1_mult97 v1811).toNat := fun k1_t4 v1811 k1_hw23 => k1_hw23.1
theorem k1_off40_inb : ∀ (k1_t4 : Fin k1_t4_loop.trips) (v1811 : BitVec 32) (k1_hw23 : k1_chk23 k1_t4 v1811), ∀ (r : Fin 4), ∀ a, (k1_off40 k1_t4 v1811 (BitVec.ofNat 32 (16 * r.val))) a + S1x1x16.size a ≤ S2x50x128.size a := fun k1_t4 v1811 k1_hw23 r => k1_hw23.2.1 r
theorem k1_mult98_dvd : ∀ (k1_t4 : Fin k1_t4_loop.trips) (v1811 : BitVec 32) (k1_hw23 : k1_chk23 k1_t4 v1811), 16 ∣ (k1_mult98 v1811).toNat := fun k1_t4 v1811 k1_hw23 => k1_hw23.2.2.1
theorem k1_mult99_dvd : ∀ (k1_t4 : Fin k1_t4_loop.trips) (v1811 : BitVec 32) (k1_hw23 : k1_chk23 k1_t4 v1811), 16 ∣ (k1_mult99 v1811).toNat := fun k1_t4 v1811 k1_hw23 => k1_hw23.2.2.2.1
theorem k1_mult100_dvd : ∀ (k1_t4 : Fin k1_t4_loop.trips) (v1811 : BitVec 32) (k1_hw23 : k1_chk23 k1_t4 v1811), 16 ∣ (k1_mult100 v1811).toNat := fun k1_t4 v1811 k1_hw23 => k1_hw23.2.2.2.2

def k1_mult101 (v1847 : BitVec 32) : BitVec 32 :=
  let c0_i32_742 : BitVec 32 := 0#32
  let v1848 : BitVec 32 := Scalar.addi v1847 c0_i32_742
  v1848

def k1_off41 (k1_t4 : Fin k1_t4_loop.trips) (v1847 : BitVec 32) (c0_i32_742 : BitVec 32) : Fin 3 → Nat :=
  let c1_i32_743 : BitVec 32 := 1#32
  let v1850 : Index := Scalar.indexCast c1_i32_743
  let c0_i32_653 : BitVec 32 := 0#32
  let c1_i32_655 : BitVec 32 := 1#32
  let arg18 : BitVec 32 := Scf.iv c0_i32_653 c1_i32_655 k1_t4
  let c16_i32_741 : BitVec 32 := 16#32
  let v1844 : BitVec 32 := Scalar.muli arg18 c16_i32_741
  let c5_i32 : BitVec 32 := 5#32
  let v1845 : BitVec 32 := Scalar.addi v1844 c5_i32
  let v1851 : Index := Scalar.indexCast v1845
  let v1848 : BitVec 32 := Scalar.addi v1847 c0_i32_742
  let v1849 : BitVec 32 := v1848
  let v1852 : Index := Scalar.indexCast v1849
  ![1, v1851.toNat, v1852.toNat]
def k1_mult102 (v1847 : BitVec 32) : BitVec 32 :=
  let c16_i32_744 : BitVec 32 := 16#32
  let v1856 : BitVec 32 := Scalar.addi v1847 c16_i32_744
  v1856
def k1_mult103 (v1847 : BitVec 32) : BitVec 32 :=
  let c32_i32_746 : BitVec 32 := 32#32
  let v1864 : BitVec 32 := Scalar.addi v1847 c32_i32_746
  v1864
def k1_mult104 (v1847 : BitVec 32) : BitVec 32 :=
  let c48_i32_748 : BitVec 32 := 48#32
  let v1872 : BitVec 32 := Scalar.addi v1847 c48_i32_748
  v1872

def k1_chk24 (k1_t4 : Fin k1_t4_loop.trips) (v1847 : BitVec 32) : Prop :=
  (16 ∣ (k1_mult101 v1847).toNat) ∧
  (∀ (r : Fin 4), ∀ a, (k1_off41 k1_t4 v1847 (BitVec.ofNat 32 (16 * r.val))) a + S1x1x16.size a ≤ S2x50x128.size a) ∧
  (16 ∣ (k1_mult102 v1847).toNat) ∧
  (16 ∣ (k1_mult103 v1847).toNat) ∧
  (16 ∣ (k1_mult104 v1847).toNat)
instance k1_chk24.dec : ∀ (k1_t4 : Fin k1_t4_loop.trips) (v1847 : BitVec 32), Decidable (k1_chk24 k1_t4 v1847) := fun k1_t4 v1847 => decidable_of_iff' _ (Iff.of_eq (k1_chk24.eq_1 k1_t4 v1847))
theorem k1_mult101_dvd : ∀ (k1_t4 : Fin k1_t4_loop.trips) (v1847 : BitVec 32) (k1_hw24 : k1_chk24 k1_t4 v1847), 16 ∣ (k1_mult101 v1847).toNat := fun k1_t4 v1847 k1_hw24 => k1_hw24.1
theorem k1_off41_inb : ∀ (k1_t4 : Fin k1_t4_loop.trips) (v1847 : BitVec 32) (k1_hw24 : k1_chk24 k1_t4 v1847), ∀ (r : Fin 4), ∀ a, (k1_off41 k1_t4 v1847 (BitVec.ofNat 32 (16 * r.val))) a + S1x1x16.size a ≤ S2x50x128.size a := fun k1_t4 v1847 k1_hw24 r => k1_hw24.2.1 r
theorem k1_mult102_dvd : ∀ (k1_t4 : Fin k1_t4_loop.trips) (v1847 : BitVec 32) (k1_hw24 : k1_chk24 k1_t4 v1847), 16 ∣ (k1_mult102 v1847).toNat := fun k1_t4 v1847 k1_hw24 => k1_hw24.2.2.1
theorem k1_mult103_dvd : ∀ (k1_t4 : Fin k1_t4_loop.trips) (v1847 : BitVec 32) (k1_hw24 : k1_chk24 k1_t4 v1847), 16 ∣ (k1_mult103 v1847).toNat := fun k1_t4 v1847 k1_hw24 => k1_hw24.2.2.2.1
theorem k1_mult104_dvd : ∀ (k1_t4 : Fin k1_t4_loop.trips) (v1847 : BitVec 32) (k1_hw24 : k1_chk24 k1_t4 v1847), 16 ∣ (k1_mult104 v1847).toNat := fun k1_t4 v1847 k1_hw24 => k1_hw24.2.2.2.2

def k1_mult105 (v1883 : BitVec 32) : BitVec 32 :=
  let c0_i32_752 : BitVec 32 := 0#32
  let v1884 : BitVec 32 := Scalar.addi v1883 c0_i32_752
  v1884

def k1_off42 (k1_t4 : Fin k1_t4_loop.trips) (v1883 : BitVec 32) (c0_i32_752 : BitVec 32) : Fin 3 → Nat :=
  let c1_i32_753 : BitVec 32 := 1#32
  let v1886 : Index := Scalar.indexCast c1_i32_753
  let c0_i32_653 : BitVec 32 := 0#32
  let c1_i32_655 : BitVec 32 := 1#32
  let arg18 : BitVec 32 := Scf.iv c0_i32_653 c1_i32_655 k1_t4
  let c16_i32_750 : BitVec 32 := 16#32
  let v1880 : BitVec 32 := Scalar.muli arg18 c16_i32_750
  let c6_i32_751 : BitVec 32 := 6#32
  let v1881 : BitVec 32 := Scalar.addi v1880 c6_i32_751
  let v1887 : Index := Scalar.indexCast v1881
  let v1884 : BitVec 32 := Scalar.addi v1883 c0_i32_752
  let v1885 : BitVec 32 := v1884
  let v1888 : Index := Scalar.indexCast v1885
  ![1, v1887.toNat, v1888.toNat]
def k1_mult106 (v1883 : BitVec 32) : BitVec 32 :=
  let c16_i32_754 : BitVec 32 := 16#32
  let v1892 : BitVec 32 := Scalar.addi v1883 c16_i32_754
  v1892
def k1_mult107 (v1883 : BitVec 32) : BitVec 32 :=
  let c32_i32_756 : BitVec 32 := 32#32
  let v1900 : BitVec 32 := Scalar.addi v1883 c32_i32_756
  v1900
def k1_mult108 (v1883 : BitVec 32) : BitVec 32 :=
  let c48_i32_758 : BitVec 32 := 48#32
  let v1908 : BitVec 32 := Scalar.addi v1883 c48_i32_758
  v1908

def k1_chk25 (k1_t4 : Fin k1_t4_loop.trips) (v1883 : BitVec 32) : Prop :=
  (16 ∣ (k1_mult105 v1883).toNat) ∧
  (∀ (r : Fin 4), ∀ a, (k1_off42 k1_t4 v1883 (BitVec.ofNat 32 (16 * r.val))) a + S1x1x16.size a ≤ S2x50x128.size a) ∧
  (16 ∣ (k1_mult106 v1883).toNat) ∧
  (16 ∣ (k1_mult107 v1883).toNat) ∧
  (16 ∣ (k1_mult108 v1883).toNat)
instance k1_chk25.dec : ∀ (k1_t4 : Fin k1_t4_loop.trips) (v1883 : BitVec 32), Decidable (k1_chk25 k1_t4 v1883) := fun k1_t4 v1883 => decidable_of_iff' _ (Iff.of_eq (k1_chk25.eq_1 k1_t4 v1883))
theorem k1_mult105_dvd : ∀ (k1_t4 : Fin k1_t4_loop.trips) (v1883 : BitVec 32) (k1_hw25 : k1_chk25 k1_t4 v1883), 16 ∣ (k1_mult105 v1883).toNat := fun k1_t4 v1883 k1_hw25 => k1_hw25.1
theorem k1_off42_inb : ∀ (k1_t4 : Fin k1_t4_loop.trips) (v1883 : BitVec 32) (k1_hw25 : k1_chk25 k1_t4 v1883), ∀ (r : Fin 4), ∀ a, (k1_off42 k1_t4 v1883 (BitVec.ofNat 32 (16 * r.val))) a + S1x1x16.size a ≤ S2x50x128.size a := fun k1_t4 v1883 k1_hw25 r => k1_hw25.2.1 r
theorem k1_mult106_dvd : ∀ (k1_t4 : Fin k1_t4_loop.trips) (v1883 : BitVec 32) (k1_hw25 : k1_chk25 k1_t4 v1883), 16 ∣ (k1_mult106 v1883).toNat := fun k1_t4 v1883 k1_hw25 => k1_hw25.2.2.1
theorem k1_mult107_dvd : ∀ (k1_t4 : Fin k1_t4_loop.trips) (v1883 : BitVec 32) (k1_hw25 : k1_chk25 k1_t4 v1883), 16 ∣ (k1_mult107 v1883).toNat := fun k1_t4 v1883 k1_hw25 => k1_hw25.2.2.2.1
theorem k1_mult108_dvd : ∀ (k1_t4 : Fin k1_t4_loop.trips) (v1883 : BitVec 32) (k1_hw25 : k1_chk25 k1_t4 v1883), 16 ∣ (k1_mult108 v1883).toNat := fun k1_t4 v1883 k1_hw25 => k1_hw25.2.2.2.2

def k1_mult109 (v1919 : BitVec 32) : BitVec 32 :=
  let c0_i32_762 : BitVec 32 := 0#32
  let v1920 : BitVec 32 := Scalar.addi v1919 c0_i32_762
  v1920

def k1_off43 (k1_t4 : Fin k1_t4_loop.trips) (v1919 : BitVec 32) (c0_i32_762 : BitVec 32) : Fin 3 → Nat :=
  let c1_i32_763 : BitVec 32 := 1#32
  let v1922 : Index := Scalar.indexCast c1_i32_763
  let c0_i32_653 : BitVec 32 := 0#32
  let c1_i32_655 : BitVec 32 := 1#32
  let arg18 : BitVec 32 := Scf.iv c0_i32_653 c1_i32_655 k1_t4
  let c16_i32_760 : BitVec 32 := 16#32
  let v1916 : BitVec 32 := Scalar.muli arg18 c16_i32_760
  let c7_i32_761 : BitVec 32 := 7#32
  let v1917 : BitVec 32 := Scalar.addi v1916 c7_i32_761
  let v1923 : Index := Scalar.indexCast v1917
  let v1920 : BitVec 32 := Scalar.addi v1919 c0_i32_762
  let v1921 : BitVec 32 := v1920
  let v1924 : Index := Scalar.indexCast v1921
  ![1, v1923.toNat, v1924.toNat]
def k1_mult110 (v1919 : BitVec 32) : BitVec 32 :=
  let c16_i32_764 : BitVec 32 := 16#32
  let v1928 : BitVec 32 := Scalar.addi v1919 c16_i32_764
  v1928
def k1_mult111 (v1919 : BitVec 32) : BitVec 32 :=
  let c32_i32_766 : BitVec 32 := 32#32
  let v1936 : BitVec 32 := Scalar.addi v1919 c32_i32_766
  v1936
def k1_mult112 (v1919 : BitVec 32) : BitVec 32 :=
  let c48_i32_768 : BitVec 32 := 48#32
  let v1944 : BitVec 32 := Scalar.addi v1919 c48_i32_768
  v1944

def k1_chk26 (k1_t4 : Fin k1_t4_loop.trips) (v1919 : BitVec 32) : Prop :=
  (16 ∣ (k1_mult109 v1919).toNat) ∧
  (∀ (r : Fin 4), ∀ a, (k1_off43 k1_t4 v1919 (BitVec.ofNat 32 (16 * r.val))) a + S1x1x16.size a ≤ S2x50x128.size a) ∧
  (16 ∣ (k1_mult110 v1919).toNat) ∧
  (16 ∣ (k1_mult111 v1919).toNat) ∧
  (16 ∣ (k1_mult112 v1919).toNat)
instance k1_chk26.dec : ∀ (k1_t4 : Fin k1_t4_loop.trips) (v1919 : BitVec 32), Decidable (k1_chk26 k1_t4 v1919) := fun k1_t4 v1919 => decidable_of_iff' _ (Iff.of_eq (k1_chk26.eq_1 k1_t4 v1919))
theorem k1_mult109_dvd : ∀ (k1_t4 : Fin k1_t4_loop.trips) (v1919 : BitVec 32) (k1_hw26 : k1_chk26 k1_t4 v1919), 16 ∣ (k1_mult109 v1919).toNat := fun k1_t4 v1919 k1_hw26 => k1_hw26.1
theorem k1_off43_inb : ∀ (k1_t4 : Fin k1_t4_loop.trips) (v1919 : BitVec 32) (k1_hw26 : k1_chk26 k1_t4 v1919), ∀ (r : Fin 4), ∀ a, (k1_off43 k1_t4 v1919 (BitVec.ofNat 32 (16 * r.val))) a + S1x1x16.size a ≤ S2x50x128.size a := fun k1_t4 v1919 k1_hw26 r => k1_hw26.2.1 r
theorem k1_mult110_dvd : ∀ (k1_t4 : Fin k1_t4_loop.trips) (v1919 : BitVec 32) (k1_hw26 : k1_chk26 k1_t4 v1919), 16 ∣ (k1_mult110 v1919).toNat := fun k1_t4 v1919 k1_hw26 => k1_hw26.2.2.1
theorem k1_mult111_dvd : ∀ (k1_t4 : Fin k1_t4_loop.trips) (v1919 : BitVec 32) (k1_hw26 : k1_chk26 k1_t4 v1919), 16 ∣ (k1_mult111 v1919).toNat := fun k1_t4 v1919 k1_hw26 => k1_hw26.2.2.2.1
theorem k1_mult112_dvd : ∀ (k1_t4 : Fin k1_t4_loop.trips) (v1919 : BitVec 32) (k1_hw26 : k1_chk26 k1_t4 v1919), 16 ∣ (k1_mult112 v1919).toNat := fun k1_t4 v1919 k1_hw26 => k1_hw26.2.2.2.2

def k1_mult113 (v1955 : BitVec 32) : BitVec 32 :=
  let c0_i32_772 : BitVec 32 := 0#32
  let v1956 : BitVec 32 := Scalar.addi v1955 c0_i32_772
  v1956

def k1_off44 (k1_t4 : Fin k1_t4_loop.trips) (v1955 : BitVec 32) (c0_i32_772 : BitVec 32) : Fin 3 → Nat :=
  let c1_i32_773 : BitVec 32 := 1#32
  let v1958 : Index := Scalar.indexCast c1_i32_773
  let c0_i32_653 : BitVec 32 := 0#32
  let c1_i32_655 : BitVec 32 := 1#32
  let arg18 : BitVec 32 := Scf.iv c0_i32_653 c1_i32_655 k1_t4
  let c16_i32_770 : BitVec 32 := 16#32
  let v1952 : BitVec 32 := Scalar.muli arg18 c16_i32_770
  let c8_i32_771 : BitVec 32 := 8#32
  let v1953 : BitVec 32 := Scalar.addi v1952 c8_i32_771
  let v1959 : Index := Scalar.indexCast v1953
  let v1956 : BitVec 32 := Scalar.addi v1955 c0_i32_772
  let v1957 : BitVec 32 := v1956
  let v1960 : Index := Scalar.indexCast v1957
  ![1, v1959.toNat, v1960.toNat]
def k1_mult114 (v1955 : BitVec 32) : BitVec 32 :=
  let c16_i32_774 : BitVec 32 := 16#32
  let v1964 : BitVec 32 := Scalar.addi v1955 c16_i32_774
  v1964
def k1_mult115 (v1955 : BitVec 32) : BitVec 32 :=
  let c32_i32_776 : BitVec 32 := 32#32
  let v1972 : BitVec 32 := Scalar.addi v1955 c32_i32_776
  v1972
def k1_mult116 (v1955 : BitVec 32) : BitVec 32 :=
  let c48_i32_778 : BitVec 32 := 48#32
  let v1980 : BitVec 32 := Scalar.addi v1955 c48_i32_778
  v1980

def k1_chk27 (k1_t4 : Fin k1_t4_loop.trips) (v1955 : BitVec 32) : Prop :=
  (16 ∣ (k1_mult113 v1955).toNat) ∧
  (∀ (r : Fin 4), ∀ a, (k1_off44 k1_t4 v1955 (BitVec.ofNat 32 (16 * r.val))) a + S1x1x16.size a ≤ S2x50x128.size a) ∧
  (16 ∣ (k1_mult114 v1955).toNat) ∧
  (16 ∣ (k1_mult115 v1955).toNat) ∧
  (16 ∣ (k1_mult116 v1955).toNat)
instance k1_chk27.dec : ∀ (k1_t4 : Fin k1_t4_loop.trips) (v1955 : BitVec 32), Decidable (k1_chk27 k1_t4 v1955) := fun k1_t4 v1955 => decidable_of_iff' _ (Iff.of_eq (k1_chk27.eq_1 k1_t4 v1955))
theorem k1_mult113_dvd : ∀ (k1_t4 : Fin k1_t4_loop.trips) (v1955 : BitVec 32) (k1_hw27 : k1_chk27 k1_t4 v1955), 16 ∣ (k1_mult113 v1955).toNat := fun k1_t4 v1955 k1_hw27 => k1_hw27.1
theorem k1_off44_inb : ∀ (k1_t4 : Fin k1_t4_loop.trips) (v1955 : BitVec 32) (k1_hw27 : k1_chk27 k1_t4 v1955), ∀ (r : Fin 4), ∀ a, (k1_off44 k1_t4 v1955 (BitVec.ofNat 32 (16 * r.val))) a + S1x1x16.size a ≤ S2x50x128.size a := fun k1_t4 v1955 k1_hw27 r => k1_hw27.2.1 r
theorem k1_mult114_dvd : ∀ (k1_t4 : Fin k1_t4_loop.trips) (v1955 : BitVec 32) (k1_hw27 : k1_chk27 k1_t4 v1955), 16 ∣ (k1_mult114 v1955).toNat := fun k1_t4 v1955 k1_hw27 => k1_hw27.2.2.1
theorem k1_mult115_dvd : ∀ (k1_t4 : Fin k1_t4_loop.trips) (v1955 : BitVec 32) (k1_hw27 : k1_chk27 k1_t4 v1955), 16 ∣ (k1_mult115 v1955).toNat := fun k1_t4 v1955 k1_hw27 => k1_hw27.2.2.2.1
theorem k1_mult116_dvd : ∀ (k1_t4 : Fin k1_t4_loop.trips) (v1955 : BitVec 32) (k1_hw27 : k1_chk27 k1_t4 v1955), 16 ∣ (k1_mult116 v1955).toNat := fun k1_t4 v1955 k1_hw27 => k1_hw27.2.2.2.2

def k1_mult117 (v1991 : BitVec 32) : BitVec 32 :=
  let c0_i32_781 : BitVec 32 := 0#32
  let v1992 : BitVec 32 := Scalar.addi v1991 c0_i32_781
  v1992

def k1_off45 (k1_t4 : Fin k1_t4_loop.trips) (v1991 : BitVec 32) (c0_i32_781 : BitVec 32) : Fin 3 → Nat :=
  let c1_i32_782 : BitVec 32 := 1#32
  let v1994 : Index := Scalar.indexCast c1_i32_782
  let c0_i32_653 : BitVec 32 := 0#32
  let c1_i32_655 : BitVec 32 := 1#32
  let arg18 : BitVec 32 := Scf.iv c0_i32_653 c1_i32_655 k1_t4
  let c16_i32_780 : BitVec 32 := 16#32
  let v1988 : BitVec 32 := Scalar.muli arg18 c16_i32_780
  let c9_i32 : BitVec 32 := 9#32
  let v1989 : BitVec 32 := Scalar.addi v1988 c9_i32
  let v1995 : Index := Scalar.indexCast v1989
  let v1992 : BitVec 32 := Scalar.addi v1991 c0_i32_781
  let v1993 : BitVec 32 := v1992
  let v1996 : Index := Scalar.indexCast v1993
  ![1, v1995.toNat, v1996.toNat]
def k1_mult118 (v1991 : BitVec 32) : BitVec 32 :=
  let c16_i32_783 : BitVec 32 := 16#32
  let v2000 : BitVec 32 := Scalar.addi v1991 c16_i32_783
  v2000
def k1_mult119 (v1991 : BitVec 32) : BitVec 32 :=
  let c32_i32_785 : BitVec 32 := 32#32
  let v2008 : BitVec 32 := Scalar.addi v1991 c32_i32_785
  v2008
def k1_mult120 (v1991 : BitVec 32) : BitVec 32 :=
  let c48_i32_787 : BitVec 32 := 48#32
  let v2016 : BitVec 32 := Scalar.addi v1991 c48_i32_787
  v2016

def k1_chk28 (k1_t4 : Fin k1_t4_loop.trips) (v1991 : BitVec 32) : Prop :=
  (16 ∣ (k1_mult117 v1991).toNat) ∧
  (∀ (r : Fin 4), ∀ a, (k1_off45 k1_t4 v1991 (BitVec.ofNat 32 (16 * r.val))) a + S1x1x16.size a ≤ S2x50x128.size a) ∧
  (16 ∣ (k1_mult118 v1991).toNat) ∧
  (16 ∣ (k1_mult119 v1991).toNat) ∧
  (16 ∣ (k1_mult120 v1991).toNat)
instance k1_chk28.dec : ∀ (k1_t4 : Fin k1_t4_loop.trips) (v1991 : BitVec 32), Decidable (k1_chk28 k1_t4 v1991) := fun k1_t4 v1991 => decidable_of_iff' _ (Iff.of_eq (k1_chk28.eq_1 k1_t4 v1991))
theorem k1_mult117_dvd : ∀ (k1_t4 : Fin k1_t4_loop.trips) (v1991 : BitVec 32) (k1_hw28 : k1_chk28 k1_t4 v1991), 16 ∣ (k1_mult117 v1991).toNat := fun k1_t4 v1991 k1_hw28 => k1_hw28.1
theorem k1_off45_inb : ∀ (k1_t4 : Fin k1_t4_loop.trips) (v1991 : BitVec 32) (k1_hw28 : k1_chk28 k1_t4 v1991), ∀ (r : Fin 4), ∀ a, (k1_off45 k1_t4 v1991 (BitVec.ofNat 32 (16 * r.val))) a + S1x1x16.size a ≤ S2x50x128.size a := fun k1_t4 v1991 k1_hw28 r => k1_hw28.2.1 r
theorem k1_mult118_dvd : ∀ (k1_t4 : Fin k1_t4_loop.trips) (v1991 : BitVec 32) (k1_hw28 : k1_chk28 k1_t4 v1991), 16 ∣ (k1_mult118 v1991).toNat := fun k1_t4 v1991 k1_hw28 => k1_hw28.2.2.1
theorem k1_mult119_dvd : ∀ (k1_t4 : Fin k1_t4_loop.trips) (v1991 : BitVec 32) (k1_hw28 : k1_chk28 k1_t4 v1991), 16 ∣ (k1_mult119 v1991).toNat := fun k1_t4 v1991 k1_hw28 => k1_hw28.2.2.2.1
theorem k1_mult120_dvd : ∀ (k1_t4 : Fin k1_t4_loop.trips) (v1991 : BitVec 32) (k1_hw28 : k1_chk28 k1_t4 v1991), 16 ∣ (k1_mult120 v1991).toNat := fun k1_t4 v1991 k1_hw28 => k1_hw28.2.2.2.2

def k1_mult121 (v2027 : BitVec 32) : BitVec 32 :=
  let c0_i32_790 : BitVec 32 := 0#32
  let v2028 : BitVec 32 := Scalar.addi v2027 c0_i32_790
  v2028

def k1_off46 (k1_t4 : Fin k1_t4_loop.trips) (v2027 : BitVec 32) (c0_i32_790 : BitVec 32) : Fin 3 → Nat :=
  let c1_i32_791 : BitVec 32 := 1#32
  let v2030 : Index := Scalar.indexCast c1_i32_791
  let c0_i32_653 : BitVec 32 := 0#32
  let c1_i32_655 : BitVec 32 := 1#32
  let arg18 : BitVec 32 := Scf.iv c0_i32_653 c1_i32_655 k1_t4
  let c16_i32_789 : BitVec 32 := 16#32
  let v2024 : BitVec 32 := Scalar.muli arg18 c16_i32_789
  let c10_i32 : BitVec 32 := 10#32
  let v2025 : BitVec 32 := Scalar.addi v2024 c10_i32
  let v2031 : Index := Scalar.indexCast v2025
  let v2028 : BitVec 32 := Scalar.addi v2027 c0_i32_790
  let v2029 : BitVec 32 := v2028
  let v2032 : Index := Scalar.indexCast v2029
  ![1, v2031.toNat, v2032.toNat]
def k1_mult122 (v2027 : BitVec 32) : BitVec 32 :=
  let c16_i32_792 : BitVec 32 := 16#32
  let v2036 : BitVec 32 := Scalar.addi v2027 c16_i32_792
  v2036
def k1_mult123 (v2027 : BitVec 32) : BitVec 32 :=
  let c32_i32_794 : BitVec 32 := 32#32
  let v2044 : BitVec 32 := Scalar.addi v2027 c32_i32_794
  v2044
def k1_mult124 (v2027 : BitVec 32) : BitVec 32 :=
  let c48_i32_796 : BitVec 32 := 48#32
  let v2052 : BitVec 32 := Scalar.addi v2027 c48_i32_796
  v2052

def k1_chk29 (k1_t4 : Fin k1_t4_loop.trips) (v2027 : BitVec 32) : Prop :=
  (16 ∣ (k1_mult121 v2027).toNat) ∧
  (∀ (r : Fin 4), ∀ a, (k1_off46 k1_t4 v2027 (BitVec.ofNat 32 (16 * r.val))) a + S1x1x16.size a ≤ S2x50x128.size a) ∧
  (16 ∣ (k1_mult122 v2027).toNat) ∧
  (16 ∣ (k1_mult123 v2027).toNat) ∧
  (16 ∣ (k1_mult124 v2027).toNat)
instance k1_chk29.dec : ∀ (k1_t4 : Fin k1_t4_loop.trips) (v2027 : BitVec 32), Decidable (k1_chk29 k1_t4 v2027) := fun k1_t4 v2027 => decidable_of_iff' _ (Iff.of_eq (k1_chk29.eq_1 k1_t4 v2027))
theorem k1_mult121_dvd : ∀ (k1_t4 : Fin k1_t4_loop.trips) (v2027 : BitVec 32) (k1_hw29 : k1_chk29 k1_t4 v2027), 16 ∣ (k1_mult121 v2027).toNat := fun k1_t4 v2027 k1_hw29 => k1_hw29.1
theorem k1_off46_inb : ∀ (k1_t4 : Fin k1_t4_loop.trips) (v2027 : BitVec 32) (k1_hw29 : k1_chk29 k1_t4 v2027), ∀ (r : Fin 4), ∀ a, (k1_off46 k1_t4 v2027 (BitVec.ofNat 32 (16 * r.val))) a + S1x1x16.size a ≤ S2x50x128.size a := fun k1_t4 v2027 k1_hw29 r => k1_hw29.2.1 r
theorem k1_mult122_dvd : ∀ (k1_t4 : Fin k1_t4_loop.trips) (v2027 : BitVec 32) (k1_hw29 : k1_chk29 k1_t4 v2027), 16 ∣ (k1_mult122 v2027).toNat := fun k1_t4 v2027 k1_hw29 => k1_hw29.2.2.1
theorem k1_mult123_dvd : ∀ (k1_t4 : Fin k1_t4_loop.trips) (v2027 : BitVec 32) (k1_hw29 : k1_chk29 k1_t4 v2027), 16 ∣ (k1_mult123 v2027).toNat := fun k1_t4 v2027 k1_hw29 => k1_hw29.2.2.2.1
theorem k1_mult124_dvd : ∀ (k1_t4 : Fin k1_t4_loop.trips) (v2027 : BitVec 32) (k1_hw29 : k1_chk29 k1_t4 v2027), 16 ∣ (k1_mult124 v2027).toNat := fun k1_t4 v2027 k1_hw29 => k1_hw29.2.2.2.2

def k1_mult125 (v2063 : BitVec 32) : BitVec 32 :=
  let c0_i32_799 : BitVec 32 := 0#32
  let v2064 : BitVec 32 := Scalar.addi v2063 c0_i32_799
  v2064

def k1_off47 (k1_t4 : Fin k1_t4_loop.trips) (v2063 : BitVec 32) (c0_i32_799 : BitVec 32) : Fin 3 → Nat :=
  let c1_i32_800 : BitVec 32 := 1#32
  let v2066 : Index := Scalar.indexCast c1_i32_800
  let c0_i32_653 : BitVec 32 := 0#32
  let c1_i32_655 : BitVec 32 := 1#32
  let arg18 : BitVec 32 := Scf.iv c0_i32_653 c1_i32_655 k1_t4
  let c16_i32_798 : BitVec 32 := 16#32
  let v2060 : BitVec 32 := Scalar.muli arg18 c16_i32_798
  let c11_i32 : BitVec 32 := 11#32
  let v2061 : BitVec 32 := Scalar.addi v2060 c11_i32
  let v2067 : Index := Scalar.indexCast v2061
  let v2064 : BitVec 32 := Scalar.addi v2063 c0_i32_799
  let v2065 : BitVec 32 := v2064
  let v2068 : Index := Scalar.indexCast v2065
  ![1, v2067.toNat, v2068.toNat]
def k1_mult126 (v2063 : BitVec 32) : BitVec 32 :=
  let c16_i32_801 : BitVec 32 := 16#32
  let v2072 : BitVec 32 := Scalar.addi v2063 c16_i32_801
  v2072
def k1_mult127 (v2063 : BitVec 32) : BitVec 32 :=
  let c32_i32_803 : BitVec 32 := 32#32
  let v2080 : BitVec 32 := Scalar.addi v2063 c32_i32_803
  v2080
def k1_mult128 (v2063 : BitVec 32) : BitVec 32 :=
  let c48_i32_805 : BitVec 32 := 48#32
  let v2088 : BitVec 32 := Scalar.addi v2063 c48_i32_805
  v2088

def k1_chk30 (k1_t4 : Fin k1_t4_loop.trips) (v2063 : BitVec 32) : Prop :=
  (16 ∣ (k1_mult125 v2063).toNat) ∧
  (∀ (r : Fin 4), ∀ a, (k1_off47 k1_t4 v2063 (BitVec.ofNat 32 (16 * r.val))) a + S1x1x16.size a ≤ S2x50x128.size a) ∧
  (16 ∣ (k1_mult126 v2063).toNat) ∧
  (16 ∣ (k1_mult127 v2063).toNat) ∧
  (16 ∣ (k1_mult128 v2063).toNat)
instance k1_chk30.dec : ∀ (k1_t4 : Fin k1_t4_loop.trips) (v2063 : BitVec 32), Decidable (k1_chk30 k1_t4 v2063) := fun k1_t4 v2063 => decidable_of_iff' _ (Iff.of_eq (k1_chk30.eq_1 k1_t4 v2063))
theorem k1_mult125_dvd : ∀ (k1_t4 : Fin k1_t4_loop.trips) (v2063 : BitVec 32) (k1_hw30 : k1_chk30 k1_t4 v2063), 16 ∣ (k1_mult125 v2063).toNat := fun k1_t4 v2063 k1_hw30 => k1_hw30.1
theorem k1_off47_inb : ∀ (k1_t4 : Fin k1_t4_loop.trips) (v2063 : BitVec 32) (k1_hw30 : k1_chk30 k1_t4 v2063), ∀ (r : Fin 4), ∀ a, (k1_off47 k1_t4 v2063 (BitVec.ofNat 32 (16 * r.val))) a + S1x1x16.size a ≤ S2x50x128.size a := fun k1_t4 v2063 k1_hw30 r => k1_hw30.2.1 r
theorem k1_mult126_dvd : ∀ (k1_t4 : Fin k1_t4_loop.trips) (v2063 : BitVec 32) (k1_hw30 : k1_chk30 k1_t4 v2063), 16 ∣ (k1_mult126 v2063).toNat := fun k1_t4 v2063 k1_hw30 => k1_hw30.2.2.1
theorem k1_mult127_dvd : ∀ (k1_t4 : Fin k1_t4_loop.trips) (v2063 : BitVec 32) (k1_hw30 : k1_chk30 k1_t4 v2063), 16 ∣ (k1_mult127 v2063).toNat := fun k1_t4 v2063 k1_hw30 => k1_hw30.2.2.2.1
theorem k1_mult128_dvd : ∀ (k1_t4 : Fin k1_t4_loop.trips) (v2063 : BitVec 32) (k1_hw30 : k1_chk30 k1_t4 v2063), 16 ∣ (k1_mult128 v2063).toNat := fun k1_t4 v2063 k1_hw30 => k1_hw30.2.2.2.2

def k1_mult129 (v2099 : BitVec 32) : BitVec 32 :=
  let c0_i32_808 : BitVec 32 := 0#32
  let v2100 : BitVec 32 := Scalar.addi v2099 c0_i32_808
  v2100

def k1_off48 (k1_t4 : Fin k1_t4_loop.trips) (v2099 : BitVec 32) (c0_i32_808 : BitVec 32) : Fin 3 → Nat :=
  let c1_i32_809 : BitVec 32 := 1#32
  let v2102 : Index := Scalar.indexCast c1_i32_809
  let c0_i32_653 : BitVec 32 := 0#32
  let c1_i32_655 : BitVec 32 := 1#32
  let arg18 : BitVec 32 := Scf.iv c0_i32_653 c1_i32_655 k1_t4
  let c16_i32_807 : BitVec 32 := 16#32
  let v2096 : BitVec 32 := Scalar.muli arg18 c16_i32_807
  let c12_i32 : BitVec 32 := 12#32
  let v2097 : BitVec 32 := Scalar.addi v2096 c12_i32
  let v2103 : Index := Scalar.indexCast v2097
  let v2100 : BitVec 32 := Scalar.addi v2099 c0_i32_808
  let v2101 : BitVec 32 := v2100
  let v2104 : Index := Scalar.indexCast v2101
  ![1, v2103.toNat, v2104.toNat]
def k1_mult130 (v2099 : BitVec 32) : BitVec 32 :=
  let c16_i32_810 : BitVec 32 := 16#32
  let v2108 : BitVec 32 := Scalar.addi v2099 c16_i32_810
  v2108
def k1_mult131 (v2099 : BitVec 32) : BitVec 32 :=
  let c32_i32_812 : BitVec 32 := 32#32
  let v2116 : BitVec 32 := Scalar.addi v2099 c32_i32_812
  v2116
def k1_mult132 (v2099 : BitVec 32) : BitVec 32 :=
  let c48_i32_814 : BitVec 32 := 48#32
  let v2124 : BitVec 32 := Scalar.addi v2099 c48_i32_814
  v2124

def k1_chk31 (k1_t4 : Fin k1_t4_loop.trips) (v2099 : BitVec 32) : Prop :=
  (16 ∣ (k1_mult129 v2099).toNat) ∧
  (∀ (r : Fin 4), ∀ a, (k1_off48 k1_t4 v2099 (BitVec.ofNat 32 (16 * r.val))) a + S1x1x16.size a ≤ S2x50x128.size a) ∧
  (16 ∣ (k1_mult130 v2099).toNat) ∧
  (16 ∣ (k1_mult131 v2099).toNat) ∧
  (16 ∣ (k1_mult132 v2099).toNat)
instance k1_chk31.dec : ∀ (k1_t4 : Fin k1_t4_loop.trips) (v2099 : BitVec 32), Decidable (k1_chk31 k1_t4 v2099) := fun k1_t4 v2099 => decidable_of_iff' _ (Iff.of_eq (k1_chk31.eq_1 k1_t4 v2099))
theorem k1_mult129_dvd : ∀ (k1_t4 : Fin k1_t4_loop.trips) (v2099 : BitVec 32) (k1_hw31 : k1_chk31 k1_t4 v2099), 16 ∣ (k1_mult129 v2099).toNat := fun k1_t4 v2099 k1_hw31 => k1_hw31.1
theorem k1_off48_inb : ∀ (k1_t4 : Fin k1_t4_loop.trips) (v2099 : BitVec 32) (k1_hw31 : k1_chk31 k1_t4 v2099), ∀ (r : Fin 4), ∀ a, (k1_off48 k1_t4 v2099 (BitVec.ofNat 32 (16 * r.val))) a + S1x1x16.size a ≤ S2x50x128.size a := fun k1_t4 v2099 k1_hw31 r => k1_hw31.2.1 r
theorem k1_mult130_dvd : ∀ (k1_t4 : Fin k1_t4_loop.trips) (v2099 : BitVec 32) (k1_hw31 : k1_chk31 k1_t4 v2099), 16 ∣ (k1_mult130 v2099).toNat := fun k1_t4 v2099 k1_hw31 => k1_hw31.2.2.1
theorem k1_mult131_dvd : ∀ (k1_t4 : Fin k1_t4_loop.trips) (v2099 : BitVec 32) (k1_hw31 : k1_chk31 k1_t4 v2099), 16 ∣ (k1_mult131 v2099).toNat := fun k1_t4 v2099 k1_hw31 => k1_hw31.2.2.2.1
theorem k1_mult132_dvd : ∀ (k1_t4 : Fin k1_t4_loop.trips) (v2099 : BitVec 32) (k1_hw31 : k1_chk31 k1_t4 v2099), 16 ∣ (k1_mult132 v2099).toNat := fun k1_t4 v2099 k1_hw31 => k1_hw31.2.2.2.2

def k1_mult133 (v2135 : BitVec 32) : BitVec 32 :=
  let c0_i32_817 : BitVec 32 := 0#32
  let v2136 : BitVec 32 := Scalar.addi v2135 c0_i32_817
  v2136

def k1_off49 (k1_t4 : Fin k1_t4_loop.trips) (v2135 : BitVec 32) (c0_i32_817 : BitVec 32) : Fin 3 → Nat :=
  let c1_i32_818 : BitVec 32 := 1#32
  let v2138 : Index := Scalar.indexCast c1_i32_818
  let c0_i32_653 : BitVec 32 := 0#32
  let c1_i32_655 : BitVec 32 := 1#32
  let arg18 : BitVec 32 := Scf.iv c0_i32_653 c1_i32_655 k1_t4
  let c16_i32_816 : BitVec 32 := 16#32
  let v2132 : BitVec 32 := Scalar.muli arg18 c16_i32_816
  let c13_i32 : BitVec 32 := 13#32
  let v2133 : BitVec 32 := Scalar.addi v2132 c13_i32
  let v2139 : Index := Scalar.indexCast v2133
  let v2136 : BitVec 32 := Scalar.addi v2135 c0_i32_817
  let v2137 : BitVec 32 := v2136
  let v2140 : Index := Scalar.indexCast v2137
  ![1, v2139.toNat, v2140.toNat]
def k1_mult134 (v2135 : BitVec 32) : BitVec 32 :=
  let c16_i32_819 : BitVec 32 := 16#32
  let v2144 : BitVec 32 := Scalar.addi v2135 c16_i32_819
  v2144
def k1_mult135 (v2135 : BitVec 32) : BitVec 32 :=
  let c32_i32_821 : BitVec 32 := 32#32
  let v2152 : BitVec 32 := Scalar.addi v2135 c32_i32_821
  v2152
def k1_mult136 (v2135 : BitVec 32) : BitVec 32 :=
  let c48_i32_823 : BitVec 32 := 48#32
  let v2160 : BitVec 32 := Scalar.addi v2135 c48_i32_823
  v2160

def k1_chk32 (k1_t4 : Fin k1_t4_loop.trips) (v2135 : BitVec 32) : Prop :=
  (16 ∣ (k1_mult133 v2135).toNat) ∧
  (∀ (r : Fin 4), ∀ a, (k1_off49 k1_t4 v2135 (BitVec.ofNat 32 (16 * r.val))) a + S1x1x16.size a ≤ S2x50x128.size a) ∧
  (16 ∣ (k1_mult134 v2135).toNat) ∧
  (16 ∣ (k1_mult135 v2135).toNat) ∧
  (16 ∣ (k1_mult136 v2135).toNat)
instance k1_chk32.dec : ∀ (k1_t4 : Fin k1_t4_loop.trips) (v2135 : BitVec 32), Decidable (k1_chk32 k1_t4 v2135) := fun k1_t4 v2135 => decidable_of_iff' _ (Iff.of_eq (k1_chk32.eq_1 k1_t4 v2135))
theorem k1_mult133_dvd : ∀ (k1_t4 : Fin k1_t4_loop.trips) (v2135 : BitVec 32) (k1_hw32 : k1_chk32 k1_t4 v2135), 16 ∣ (k1_mult133 v2135).toNat := fun k1_t4 v2135 k1_hw32 => k1_hw32.1
theorem k1_off49_inb : ∀ (k1_t4 : Fin k1_t4_loop.trips) (v2135 : BitVec 32) (k1_hw32 : k1_chk32 k1_t4 v2135), ∀ (r : Fin 4), ∀ a, (k1_off49 k1_t4 v2135 (BitVec.ofNat 32 (16 * r.val))) a + S1x1x16.size a ≤ S2x50x128.size a := fun k1_t4 v2135 k1_hw32 r => k1_hw32.2.1 r
theorem k1_mult134_dvd : ∀ (k1_t4 : Fin k1_t4_loop.trips) (v2135 : BitVec 32) (k1_hw32 : k1_chk32 k1_t4 v2135), 16 ∣ (k1_mult134 v2135).toNat := fun k1_t4 v2135 k1_hw32 => k1_hw32.2.2.1
theorem k1_mult135_dvd : ∀ (k1_t4 : Fin k1_t4_loop.trips) (v2135 : BitVec 32) (k1_hw32 : k1_chk32 k1_t4 v2135), 16 ∣ (k1_mult135 v2135).toNat := fun k1_t4 v2135 k1_hw32 => k1_hw32.2.2.2.1
theorem k1_mult136_dvd : ∀ (k1_t4 : Fin k1_t4_loop.trips) (v2135 : BitVec 32) (k1_hw32 : k1_chk32 k1_t4 v2135), 16 ∣ (k1_mult136 v2135).toNat := fun k1_t4 v2135 k1_hw32 => k1_hw32.2.2.2.2

def k1_mult137 (v2171 : BitVec 32) : BitVec 32 :=
  let c0_i32_826 : BitVec 32 := 0#32
  let v2172 : BitVec 32 := Scalar.addi v2171 c0_i32_826
  v2172

def k1_off50 (k1_t4 : Fin k1_t4_loop.trips) (v2171 : BitVec 32) (c0_i32_826 : BitVec 32) : Fin 3 → Nat :=
  let c1_i32_827 : BitVec 32 := 1#32
  let v2174 : Index := Scalar.indexCast c1_i32_827
  let c0_i32_653 : BitVec 32 := 0#32
  let c1_i32_655 : BitVec 32 := 1#32
  let arg18 : BitVec 32 := Scf.iv c0_i32_653 c1_i32_655 k1_t4
  let c16_i32_825 : BitVec 32 := 16#32
  let v2168 : BitVec 32 := Scalar.muli arg18 c16_i32_825
  let c14_i32 : BitVec 32 := 14#32
  let v2169 : BitVec 32 := Scalar.addi v2168 c14_i32
  let v2175 : Index := Scalar.indexCast v2169
  let v2172 : BitVec 32 := Scalar.addi v2171 c0_i32_826
  let v2173 : BitVec 32 := v2172
  let v2176 : Index := Scalar.indexCast v2173
  ![1, v2175.toNat, v2176.toNat]
def k1_mult138 (v2171 : BitVec 32) : BitVec 32 :=
  let c16_i32_828 : BitVec 32 := 16#32
  let v2180 : BitVec 32 := Scalar.addi v2171 c16_i32_828
  v2180
def k1_mult139 (v2171 : BitVec 32) : BitVec 32 :=
  let c32_i32_830 : BitVec 32 := 32#32
  let v2188 : BitVec 32 := Scalar.addi v2171 c32_i32_830
  v2188
def k1_mult140 (v2171 : BitVec 32) : BitVec 32 :=
  let c48_i32_832 : BitVec 32 := 48#32
  let v2196 : BitVec 32 := Scalar.addi v2171 c48_i32_832
  v2196

def k1_chk33 (k1_t4 : Fin k1_t4_loop.trips) (v2171 : BitVec 32) : Prop :=
  (16 ∣ (k1_mult137 v2171).toNat) ∧
  (∀ (r : Fin 4), ∀ a, (k1_off50 k1_t4 v2171 (BitVec.ofNat 32 (16 * r.val))) a + S1x1x16.size a ≤ S2x50x128.size a) ∧
  (16 ∣ (k1_mult138 v2171).toNat) ∧
  (16 ∣ (k1_mult139 v2171).toNat) ∧
  (16 ∣ (k1_mult140 v2171).toNat)
instance k1_chk33.dec : ∀ (k1_t4 : Fin k1_t4_loop.trips) (v2171 : BitVec 32), Decidable (k1_chk33 k1_t4 v2171) := fun k1_t4 v2171 => decidable_of_iff' _ (Iff.of_eq (k1_chk33.eq_1 k1_t4 v2171))
theorem k1_mult137_dvd : ∀ (k1_t4 : Fin k1_t4_loop.trips) (v2171 : BitVec 32) (k1_hw33 : k1_chk33 k1_t4 v2171), 16 ∣ (k1_mult137 v2171).toNat := fun k1_t4 v2171 k1_hw33 => k1_hw33.1
theorem k1_off50_inb : ∀ (k1_t4 : Fin k1_t4_loop.trips) (v2171 : BitVec 32) (k1_hw33 : k1_chk33 k1_t4 v2171), ∀ (r : Fin 4), ∀ a, (k1_off50 k1_t4 v2171 (BitVec.ofNat 32 (16 * r.val))) a + S1x1x16.size a ≤ S2x50x128.size a := fun k1_t4 v2171 k1_hw33 r => k1_hw33.2.1 r
theorem k1_mult138_dvd : ∀ (k1_t4 : Fin k1_t4_loop.trips) (v2171 : BitVec 32) (k1_hw33 : k1_chk33 k1_t4 v2171), 16 ∣ (k1_mult138 v2171).toNat := fun k1_t4 v2171 k1_hw33 => k1_hw33.2.2.1
theorem k1_mult139_dvd : ∀ (k1_t4 : Fin k1_t4_loop.trips) (v2171 : BitVec 32) (k1_hw33 : k1_chk33 k1_t4 v2171), 16 ∣ (k1_mult139 v2171).toNat := fun k1_t4 v2171 k1_hw33 => k1_hw33.2.2.2.1
theorem k1_mult140_dvd : ∀ (k1_t4 : Fin k1_t4_loop.trips) (v2171 : BitVec 32) (k1_hw33 : k1_chk33 k1_t4 v2171), 16 ∣ (k1_mult140 v2171).toNat := fun k1_t4 v2171 k1_hw33 => k1_hw33.2.2.2.2

def k1_mult141 (v2207 : BitVec 32) : BitVec 32 :=
  let c0_i32_835 : BitVec 32 := 0#32
  let v2208 : BitVec 32 := Scalar.addi v2207 c0_i32_835
  v2208

def k1_off51 (k1_t4 : Fin k1_t4_loop.trips) (v2207 : BitVec 32) (c0_i32_835 : BitVec 32) : Fin 3 → Nat :=
  let c1_i32_836 : BitVec 32 := 1#32
  let v2210 : Index := Scalar.indexCast c1_i32_836
  let c0_i32_653 : BitVec 32 := 0#32
  let c1_i32_655 : BitVec 32 := 1#32
  let arg18 : BitVec 32 := Scf.iv c0_i32_653 c1_i32_655 k1_t4
  let c16_i32_834 : BitVec 32 := 16#32
  let v2204 : BitVec 32 := Scalar.muli arg18 c16_i32_834
  let c15_i32 : BitVec 32 := 15#32
  let v2205 : BitVec 32 := Scalar.addi v2204 c15_i32
  let v2211 : Index := Scalar.indexCast v2205
  let v2208 : BitVec 32 := Scalar.addi v2207 c0_i32_835
  let v2209 : BitVec 32 := v2208
  let v2212 : Index := Scalar.indexCast v2209
  ![1, v2211.toNat, v2212.toNat]
def k1_mult142 (v2207 : BitVec 32) : BitVec 32 :=
  let c16_i32_837 : BitVec 32 := 16#32
  let v2216 : BitVec 32 := Scalar.addi v2207 c16_i32_837
  v2216
def k1_mult143 (v2207 : BitVec 32) : BitVec 32 :=
  let c32_i32_839 : BitVec 32 := 32#32
  let v2224 : BitVec 32 := Scalar.addi v2207 c32_i32_839
  v2224
def k1_mult144 (v2207 : BitVec 32) : BitVec 32 :=
  let c48_i32_841 : BitVec 32 := 48#32
  let v2232 : BitVec 32 := Scalar.addi v2207 c48_i32_841
  v2232

def k1_chk34 (k1_t4 : Fin k1_t4_loop.trips) (v2207 : BitVec 32) : Prop :=
  (16 ∣ (k1_mult141 v2207).toNat) ∧
  (∀ (r : Fin 4), ∀ a, (k1_off51 k1_t4 v2207 (BitVec.ofNat 32 (16 * r.val))) a + S1x1x16.size a ≤ S2x50x128.size a) ∧
  (16 ∣ (k1_mult142 v2207).toNat) ∧
  (16 ∣ (k1_mult143 v2207).toNat) ∧
  (16 ∣ (k1_mult144 v2207).toNat)
instance k1_chk34.dec : ∀ (k1_t4 : Fin k1_t4_loop.trips) (v2207 : BitVec 32), Decidable (k1_chk34 k1_t4 v2207) := fun k1_t4 v2207 => decidable_of_iff' _ (Iff.of_eq (k1_chk34.eq_1 k1_t4 v2207))
theorem k1_mult141_dvd : ∀ (k1_t4 : Fin k1_t4_loop.trips) (v2207 : BitVec 32) (k1_hw34 : k1_chk34 k1_t4 v2207), 16 ∣ (k1_mult141 v2207).toNat := fun k1_t4 v2207 k1_hw34 => k1_hw34.1
theorem k1_off51_inb : ∀ (k1_t4 : Fin k1_t4_loop.trips) (v2207 : BitVec 32) (k1_hw34 : k1_chk34 k1_t4 v2207), ∀ (r : Fin 4), ∀ a, (k1_off51 k1_t4 v2207 (BitVec.ofNat 32 (16 * r.val))) a + S1x1x16.size a ≤ S2x50x128.size a := fun k1_t4 v2207 k1_hw34 r => k1_hw34.2.1 r
theorem k1_mult142_dvd : ∀ (k1_t4 : Fin k1_t4_loop.trips) (v2207 : BitVec 32) (k1_hw34 : k1_chk34 k1_t4 v2207), 16 ∣ (k1_mult142 v2207).toNat := fun k1_t4 v2207 k1_hw34 => k1_hw34.2.2.1
theorem k1_mult143_dvd : ∀ (k1_t4 : Fin k1_t4_loop.trips) (v2207 : BitVec 32) (k1_hw34 : k1_chk34 k1_t4 v2207), 16 ∣ (k1_mult143 v2207).toNat := fun k1_t4 v2207 k1_hw34 => k1_hw34.2.2.2.1
theorem k1_mult144_dvd : ∀ (k1_t4 : Fin k1_t4_loop.trips) (v2207 : BitVec 32) (k1_hw34 : k1_chk34 k1_t4 v2207), 16 ∣ (k1_mult144 v2207).toNat := fun k1_t4 v2207 k1_hw34 => k1_hw34.2.2.2.2

def k1_off52 (k1_t2 : Fin k1_t2_loop.trips) : Fin 1 → Nat :=
  let c0_i32_652 : BitVec 32 := 0#32
  let c0_i32_549 : BitVec 32 := 0#32
  let c1_i32_551 : BitVec 32 := 1#32
  let arg17 : BitVec 32 := Scf.iv c0_i32_549 c1_i32_551 k1_t2
  let c2_i32_635 : BitVec 32 := 2#32
  let v1543 : BitVec 32 := Scalar.muli arg17 c2_i32_635
  let c1_i32_636 : BitVec 32 := 1#32
  let v1544 : BitVec 32 := Scalar.addi v1543 c1_i32_636
  let c64_i32_651 : BitVec 32 := 64#32
  let v1562 : BitVec 32 := Scalar.muli v1544 c64_i32_651
  let v1563 : BitVec 32 := v1562
  let v1564 : BitVec 32 := Scalar.addi c0_i32_652 v1563
  let c48_i32_657 : BitVec 32 := 48#32
  let v1567 : BitVec 32 := Scalar.addi v1564 c48_i32_657
  let v1568 : Index := Scalar.indexCast v1567
  ![v1568.toNat]
def k1_mult145 (v1572 : BitVec 32) : BitVec 32 :=
  let c0_i32_658 : BitVec 32 := 0#32
  let v1573 : BitVec 32 := Scalar.addi v1572 c0_i32_658
  v1573

def k1_off53 (v1572 : BitVec 32) (c0_i32_658 : BitVec 32) : Fin 3 → Nat :=
  let c1_i32_659 : BitVec 32 := 1#32
  let v1575 : Index := Scalar.indexCast c1_i32_659
  let c48_i32_660 : BitVec 32 := 48#32
  let v1576 : Index := Scalar.indexCast c48_i32_660
  let v1573 : BitVec 32 := Scalar.addi v1572 c0_i32_658
  let v1574 : BitVec 32 := v1573
  let v1577 : Index := Scalar.indexCast v1574
  ![1, 48, v1577.toNat]
def k1_mult146 (v1572 : BitVec 32) : BitVec 32 :=
  let c16_i32_661 : BitVec 32 := 16#32
  let v1581 : BitVec 32 := Scalar.addi v1572 c16_i32_661
  v1581
def k1_mult147 (v1572 : BitVec 32) : BitVec 32 :=
  let c32_i32_664 : BitVec 32 := 32#32
  let v1589 : BitVec 32 := Scalar.addi v1572 c32_i32_664
  v1589
def k1_mult148 (v1572 : BitVec 32) : BitVec 32 :=
  let c48_i32_667 : BitVec 32 := 48#32
  let v1597 : BitVec 32 := Scalar.addi v1572 c48_i32_667
  v1597

def k1_chk35 (v1572 : BitVec 32) : Prop :=
  (16 ∣ (k1_mult145 v1572).toNat) ∧
  (∀ (r : Fin 4), ∀ a, (k1_off53 v1572 (BitVec.ofNat 32 (16 * r.val))) a + S1x1x16.size a ≤ S2x50x128.size a) ∧
  (16 ∣ (k1_mult146 v1572).toNat) ∧
  (16 ∣ (k1_mult147 v1572).toNat) ∧
  (16 ∣ (k1_mult148 v1572).toNat)
instance k1_chk35.dec : ∀ (v1572 : BitVec 32), Decidable (k1_chk35 v1572) := fun v1572 => decidable_of_iff' _ (Iff.of_eq (k1_chk35.eq_1 v1572))
theorem k1_mult145_dvd : ∀ (v1572 : BitVec 32) (k1_hw35 : k1_chk35 v1572), 16 ∣ (k1_mult145 v1572).toNat := fun v1572 k1_hw35 => k1_hw35.1
theorem k1_off53_inb : ∀ (v1572 : BitVec 32) (k1_hw35 : k1_chk35 v1572), ∀ (r : Fin 4), ∀ a, (k1_off53 v1572 (BitVec.ofNat 32 (16 * r.val))) a + S1x1x16.size a ≤ S2x50x128.size a := fun v1572 k1_hw35 r => k1_hw35.2.1 r
theorem k1_mult146_dvd : ∀ (v1572 : BitVec 32) (k1_hw35 : k1_chk35 v1572), 16 ∣ (k1_mult146 v1572).toNat := fun v1572 k1_hw35 => k1_hw35.2.2.1
theorem k1_mult147_dvd : ∀ (v1572 : BitVec 32) (k1_hw35 : k1_chk35 v1572), 16 ∣ (k1_mult147 v1572).toNat := fun v1572 k1_hw35 => k1_hw35.2.2.2.1
theorem k1_mult148_dvd : ∀ (v1572 : BitVec 32) (k1_hw35 : k1_chk35 v1572), 16 ∣ (k1_mult148 v1572).toNat := fun v1572 k1_hw35 => k1_hw35.2.2.2.2

def k1_mult149 (v1606 : BitVec 32) : BitVec 32 :=
  let c0_i32_670 : BitVec 32 := 0#32
  let v1607 : BitVec 32 := Scalar.addi v1606 c0_i32_670
  v1607

def k1_off54 (v1606 : BitVec 32) (c0_i32_670 : BitVec 32) : Fin 3 → Nat :=
  let c1_i32_671 : BitVec 32 := 1#32
  let v1609 : Index := Scalar.indexCast c1_i32_671
  let c49_i32_672 : BitVec 32 := 49#32
  let v1610 : Index := Scalar.indexCast c49_i32_672
  let v1607 : BitVec 32 := Scalar.addi v1606 c0_i32_670
  let v1608 : BitVec 32 := v1607
  let v1611 : Index := Scalar.indexCast v1608
  ![1, 49, v1611.toNat]
def k1_mult150 (v1606 : BitVec 32) : BitVec 32 :=
  let c16_i32_673 : BitVec 32 := 16#32
  let v1615 : BitVec 32 := Scalar.addi v1606 c16_i32_673
  v1615
def k1_mult151 (v1606 : BitVec 32) : BitVec 32 :=
  let c32_i32_676 : BitVec 32 := 32#32
  let v1623 : BitVec 32 := Scalar.addi v1606 c32_i32_676
  v1623
def k1_mult152 (v1606 : BitVec 32) : BitVec 32 :=
  let c48_i32_679 : BitVec 32 := 48#32
  let v1631 : BitVec 32 := Scalar.addi v1606 c48_i32_679
  v1631

def k1_chk36 (v1606 : BitVec 32) : Prop :=
  (16 ∣ (k1_mult149 v1606).toNat) ∧
  (∀ (r : Fin 4), ∀ a, (k1_off54 v1606 (BitVec.ofNat 32 (16 * r.val))) a + S1x1x16.size a ≤ S2x50x128.size a) ∧
  (16 ∣ (k1_mult150 v1606).toNat) ∧
  (16 ∣ (k1_mult151 v1606).toNat) ∧
  (16 ∣ (k1_mult152 v1606).toNat)
instance k1_chk36.dec : ∀ (v1606 : BitVec 32), Decidable (k1_chk36 v1606) := fun v1606 => decidable_of_iff' _ (Iff.of_eq (k1_chk36.eq_1 v1606))
theorem k1_mult149_dvd : ∀ (v1606 : BitVec 32) (k1_hw36 : k1_chk36 v1606), 16 ∣ (k1_mult149 v1606).toNat := fun v1606 k1_hw36 => k1_hw36.1
theorem k1_off54_inb : ∀ (v1606 : BitVec 32) (k1_hw36 : k1_chk36 v1606), ∀ (r : Fin 4), ∀ a, (k1_off54 v1606 (BitVec.ofNat 32 (16 * r.val))) a + S1x1x16.size a ≤ S2x50x128.size a := fun v1606 k1_hw36 r => k1_hw36.2.1 r
theorem k1_mult150_dvd : ∀ (v1606 : BitVec 32) (k1_hw36 : k1_chk36 v1606), 16 ∣ (k1_mult150 v1606).toNat := fun v1606 k1_hw36 => k1_hw36.2.2.1
theorem k1_mult151_dvd : ∀ (v1606 : BitVec 32) (k1_hw36 : k1_chk36 v1606), 16 ∣ (k1_mult151 v1606).toNat := fun v1606 k1_hw36 => k1_hw36.2.2.2.1
theorem k1_mult152_dvd : ∀ (v1606 : BitVec 32) (k1_hw36 : k1_chk36 v1606), 16 ∣ (k1_mult152 v1606).toNat := fun v1606 k1_hw36 => k1_hw36.2.2.2.2

def k1_off55 (k1_t2 : Fin k1_t2_loop.trips) : Fin 3 → Nat :=
  let c0_i32_682 : BitVec 32 := 0#32
  let v1639 : Index := Scalar.indexCast c0_i32_682
  let c0_i32_549 : BitVec 32 := 0#32
  let c1_i32_551 : BitVec 32 := 1#32
  let arg17 : BitVec 32 := Scf.iv c0_i32_549 c1_i32_551 k1_t2
  let c2_i32_635 : BitVec 32 := 2#32
  let v1543 : BitVec 32 := Scalar.muli arg17 c2_i32_635
  let c1_i32_636 : BitVec 32 := 1#32
  let v1544 : BitVec 32 := Scalar.addi v1543 c1_i32_636
  let v1640 : Index := Scalar.indexCast v1544
  let c0_683 : Index := 0#32
  ![0, v1640.toNat, 0]
def k1_off56 (k1_t2 : Fin k1_t2_loop.trips) : Fin 3 → Nat :=
  let c0_i32_684 : BitVec 32 := 0#32
  let v1644 : Index := Scalar.indexCast c0_i32_684
  let c0_i32_549 : BitVec 32 := 0#32
  let c1_i32_551 : BitVec 32 := 1#32
  let arg17 : BitVec 32 := Scf.iv c0_i32_549 c1_i32_551 k1_t2
  let c2_i32_635 : BitVec 32 := 2#32
  let v1543 : BitVec 32 := Scalar.muli arg17 c2_i32_635
  let c1_i32_636 : BitVec 32 := 1#32
  let v1544 : BitVec 32 := Scalar.addi v1543 c1_i32_636
  let v1645 : Index := Scalar.indexCast v1544
  let c16_685 : Index := 16#32
  ![0, v1645.toNat, 16]
def k1_off57 (k1_t2 : Fin k1_t2_loop.trips) : Fin 3 → Nat :=
  let c0_i32_686 : BitVec 32 := 0#32
  let v1649 : Index := Scalar.indexCast c0_i32_686
  let c0_i32_549 : BitVec 32 := 0#32
  let c1_i32_551 : BitVec 32 := 1#32
  let arg17 : BitVec 32 := Scf.iv c0_i32_549 c1_i32_551 k1_t2
  let c2_i32_635 : BitVec 32 := 2#32
  let v1543 : BitVec 32 := Scalar.muli arg17 c2_i32_635
  let c1_i32_636 : BitVec 32 := 1#32
  let v1544 : BitVec 32 := Scalar.addi v1543 c1_i32_636
  let v1650 : Index := Scalar.indexCast v1544
  let c32_687 : Index := 32#32
  ![0, v1650.toNat, 32]
def k1_off58 (k1_t2 : Fin k1_t2_loop.trips) : Fin 3 → Nat :=
  let c0_i32_688 : BitVec 32 := 0#32
  let v1654 : Index := Scalar.indexCast c0_i32_688
  let c0_i32_549 : BitVec 32 := 0#32
  let c1_i32_551 : BitVec 32 := 1#32
  let arg17 : BitVec 32 := Scf.iv c0_i32_549 c1_i32_551 k1_t2
  let c2_i32_635 : BitVec 32 := 2#32
  let v1543 : BitVec 32 := Scalar.muli arg17 c2_i32_635
  let c1_i32_636 : BitVec 32 := 1#32
  let v1544 : BitVec 32 := Scalar.addi v1543 c1_i32_636
  let v1655 : Index := Scalar.indexCast v1544
  let c48_689 : Index := 48#32
  ![0, v1655.toNat, 48]
def k1_off59 (i : grid1.Coords) (k1_t1 : Fin k1_t1_loop.trips) (c0_i32_540 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_522 : BitVec 32 := 0#32
  let c1_i32_523 : BitVec 32 := 1#32
  let arg16 : BitVec 32 := Scf.iv c0_i32_522 c1_i32_523 k1_t1
  let c2_i32_539 : BitVec 32 := 2#32
  let v1384 : BitVec 32 := Scalar.muli arg16 c2_i32_539
  let v1385 : BitVec 32 := Scalar.addi v1384 c0_i32_540
  let c16_i32 : BitVec 32 := 16#32
  let v1398 : BitVec 32 := Scalar.muli v1385 c16_i32
  let v1399 : BitVec 32 := Scalar.addi v2 v1398
  let c0_i32_556 : BitVec 32 := 0#32
  ![v1399.toNat, 0]
def k1_cond6 (k1_t1 : Fin k1_t1_loop.trips) : BitVec 1 :=
  let c0_i32_522 : BitVec 32 := 0#32
  let c1_i32_523 : BitVec 32 := 1#32
  let arg16 : BitVec 32 := Scf.iv c0_i32_522 c1_i32_523 k1_t1
  let c2_i32_560 : BitVec 32 := 2#32
  let v1406 : BitVec 32 := Scalar.muli arg16 c2_i32_560
  let c1_i32_561 : BitVec 32 := 1#32
  let v1407 : BitVec 32 := Scalar.addi v1406 c1_i32_561
  let c2_i32_562 : BitVec 32 := 2#32
  let v1408 : BitVec 1 := Scalar.cmpi .sge v1407 c2_i32_562
  let v1409 : BitVec 32 := Scalar.extui v1408
  let c0_i32_563 : BitVec 32 := 0#32
  let v1410 : BitVec 1 := Scalar.cmpi .ne v1409 c0_i32_563
  v1410

def k1_off60 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_522 : BitVec 32 := 0#32
  let c1_i32_523 : BitVec 32 := 1#32
  let arg16 : BitVec 32 := Scf.iv c0_i32_522 c1_i32_523 k1_t1
  let c2_i32_560 : BitVec 32 := 2#32
  let v1406 : BitVec 32 := Scalar.muli arg16 c2_i32_560
  let c1_i32_561 : BitVec 32 := 1#32
  let v1407 : BitVec 32 := Scalar.addi v1406 c1_i32_561
  let c2_i32_583 : BitVec 32 := 2#32
  let v1428 : BitVec 32 := Scalar.subi v1407 c2_i32_583
  let c16_i32_584 : BitVec 32 := 16#32
  let v1429 : BitVec 32 := Scalar.muli v1428 c16_i32_584
  let v1430 : BitVec 32 := Scalar.addi v2 v1429
  let c0_i32_588 : BitVec 32 := 0#32
  ![v1430.toNat, 0]
def k1_cond7 (k1_t1 : Fin k1_t1_loop.trips) : BitVec 1 :=
  let c0_i32_522 : BitVec 32 := 0#32
  let c1_i32_523 : BitVec 32 := 1#32
  let arg16 : BitVec 32 := Scf.iv c0_i32_522 c1_i32_523 k1_t1
  let c2_i32_560 : BitVec 32 := 2#32
  let v1406 : BitVec 32 := Scalar.muli arg16 c2_i32_560
  let c1_i32_561 : BitVec 32 := 1#32
  let v1407 : BitVec 32 := Scalar.addi v1406 c1_i32_561
  let c1_i32_564 : BitVec 32 := 1#32
  let v1411 : BitVec 32 := Scalar.addi v1407 c1_i32_564
  let c8_i32_565 : BitVec 32 := 8#32
  let v1412 : BitVec 1 := Scalar.cmpi .slt v1411 c8_i32_565
  let v1413 : BitVec 32 := Scalar.extui v1412
  let c0_i32_566 : BitVec 32 := 0#32
  let v1414 : BitVec 1 := Scalar.cmpi .ne v1413 c0_i32_566
  v1414

def k1_off61 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v3 : BitVec 32 := Scalar.muli v1 c8192_i32
  let c0_i32_522 : BitVec 32 := 0#32
  let c1_i32_523 : BitVec 32 := 1#32
  let arg16 : BitVec 32 := Scf.iv c0_i32_522 c1_i32_523 k1_t1
  let c2_i32_560 : BitVec 32 := 2#32
  let v1406 : BitVec 32 := Scalar.muli arg16 c2_i32_560
  let c1_i32_561 : BitVec 32 := 1#32
  let v1407 : BitVec 32 := Scalar.addi v1406 c1_i32_561
  let c1_i32_583 : BitVec 32 := 1#32
  let v1428 : BitVec 32 := Scalar.addi v1407 c1_i32_583
  let c1024_i32_584 : BitVec 32 := 1024#32
  let v1429 : BitVec 32 := Scalar.muli v1428 c1024_i32_584
  let v1430 : BitVec 32 := Scalar.addi v3 v1429
  ![v1430.toNat]
def k1_cond8 (k1_t1 : Fin k1_t1_loop.trips) : BitVec 1 :=
  let c0_i32_522 : BitVec 32 := 0#32
  let c1_i32_523 : BitVec 32 := 1#32
  let arg16 : BitVec 32 := Scf.iv c0_i32_522 c1_i32_523 k1_t1
  let c2_i32_560 : BitVec 32 := 2#32
  let v1406 : BitVec 32 := Scalar.muli arg16 c2_i32_560
  let c1_i32_561 : BitVec 32 := 1#32
  let v1407 : BitVec 32 := Scalar.addi v1406 c1_i32_561
  let c2_i32_567 : BitVec 32 := 2#32
  let v1415 : BitVec 32 := Scalar.addi v1407 c2_i32_567
  let c8_i32_568 : BitVec 32 := 8#32
  let v1416 : BitVec 1 := Scalar.cmpi .slt v1415 c8_i32_568
  let v1417 : BitVec 32 := Scalar.extui v1416
  let c0_i32_569 : BitVec 32 := 0#32
  let v1418 : BitVec 1 := Scalar.cmpi .ne v1417 c0_i32_569
  v1418

def k1_off62 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v3 : BitVec 32 := Scalar.muli v1 c8192_i32
  let c0_i32_522 : BitVec 32 := 0#32
  let c1_i32_523 : BitVec 32 := 1#32
  let arg16 : BitVec 32 := Scf.iv c0_i32_522 c1_i32_523 k1_t1
  let c2_i32_560 : BitVec 32 := 2#32
  let v1406 : BitVec 32 := Scalar.muli arg16 c2_i32_560
  let c1_i32_561 : BitVec 32 := 1#32
  let v1407 : BitVec 32 := Scalar.addi v1406 c1_i32_561
  let c2_i32_583 : BitVec 32 := 2#32
  let v1428 : BitVec 32 := Scalar.addi v1407 c2_i32_583
  let c1024_i32_584 : BitVec 32 := 1024#32
  let v1429 : BitVec 32 := Scalar.muli v1428 c1024_i32_584
  let v1430 : BitVec 32 := Scalar.addi v3 v1429
  ![v1430.toNat]
@[reducible] def k1_t5_loop : Scf.Loop 32 :=
  let c0_i32_571 : BitVec 32 := 0#32
  let c8_i32_572 : BitVec 32 := 8#32
  let v1419 : BitVec 32 := Scalar.addi c0_i32_571 c8_i32_572
  let c1_i32_573 : BitVec 32 := 1#32
  ⟨c0_i32_571, v1419, c1_i32_573⟩
def k1_mult153 (k1_t5 : Fin k1_t5_loop.trips) : BitVec 32 :=
  let c0_i32_571 : BitVec 32 := 0#32
  let c1_i32_573 : BitVec 32 := 1#32
  let arg17 : BitVec 32 := Scf.iv c0_i32_571 c1_i32_573 k1_t5
  let c2_i32_583 : BitVec 32 := 2#32
  let v1428 : BitVec 32 := Scalar.muli arg17 c2_i32_583
  let c0_i32_584 : BitVec 32 := 0#32
  let v1429 : BitVec 32 := Scalar.addi v1428 c0_i32_584
  let c64_i32_585 : BitVec 32 := 64#32
  let v1430 : BitVec 32 := Scalar.muli v1429 c64_i32_585
  v1430
def k1_off63 (k1_t5 : Fin k1_t5_loop.trips) : Fin 1 → Nat :=
  let c1024_i32_586 : BitVec 32 := 1024#32
  let c0_i32_571 : BitVec 32 := 0#32
  let c1_i32_573 : BitVec 32 := 1#32
  let arg17 : BitVec 32 := Scf.iv c0_i32_571 c1_i32_573 k1_t5
  let c2_i32_583 : BitVec 32 := 2#32
  let v1428 : BitVec 32 := Scalar.muli arg17 c2_i32_583
  let c0_i32_584 : BitVec 32 := 0#32
  let v1429 : BitVec 32 := Scalar.addi v1428 c0_i32_584
  let c64_i32_585 : BitVec 32 := 64#32
  let v1430 : BitVec 32 := Scalar.muli v1429 c64_i32_585
  let v1431 : BitVec 32 := v1430
  let v1432 : BitVec 32 := Scalar.addi c1024_i32_586 v1431
  ![v1432.toNat]
def k1_mult154 (k1_t5 : Fin k1_t5_loop.trips) : BitVec 32 :=
  let c0_i32_571 : BitVec 32 := 0#32
  let c1_i32_573 : BitVec 32 := 1#32
  let arg17 : BitVec 32 := Scf.iv c0_i32_571 c1_i32_573 k1_t5
  let c2_i32_583 : BitVec 32 := 2#32
  let v1428 : BitVec 32 := Scalar.muli arg17 c2_i32_583
  let c0_i32_584 : BitVec 32 := 0#32
  let v1429 : BitVec 32 := Scalar.addi v1428 c0_i32_584
  let c1_i32_592 : BitVec 32 := 1#32
  let v1437 : BitVec 32 := Scalar.addi v1429 c1_i32_592
  let c64_i32_593 : BitVec 32 := 64#32
  let v1438 : BitVec 32 := Scalar.muli v1437 c64_i32_593
  v1438
def k1_off64 (k1_t5 : Fin k1_t5_loop.trips) : Fin 1 → Nat :=
  let c1024_i32_594 : BitVec 32 := 1024#32
  let c0_i32_571 : BitVec 32 := 0#32
  let c1_i32_573 : BitVec 32 := 1#32
  let arg17 : BitVec 32 := Scf.iv c0_i32_571 c1_i32_573 k1_t5
  let c2_i32_583 : BitVec 32 := 2#32
  let v1428 : BitVec 32 := Scalar.muli arg17 c2_i32_583
  let c0_i32_584 : BitVec 32 := 0#32
  let v1429 : BitVec 32 := Scalar.addi v1428 c0_i32_584
  let c1_i32_592 : BitVec 32 := 1#32
  let v1437 : BitVec 32 := Scalar.addi v1429 c1_i32_592
  let c64_i32_593 : BitVec 32 := 64#32
  let v1438 : BitVec 32 := Scalar.muli v1437 c64_i32_593
  let v1439 : BitVec 32 := v1438
  let v1440 : BitVec 32 := Scalar.addi c1024_i32_594 v1439
  ![v1440.toNat]
def k1_mult155 (k1_t5 : Fin k1_t5_loop.trips) : BitVec 32 :=
  let c0_i32_571 : BitVec 32 := 0#32
  let c1_i32_573 : BitVec 32 := 1#32
  let arg17 : BitVec 32 := Scf.iv c0_i32_571 c1_i32_573 k1_t5
  let c2_i32_583 : BitVec 32 := 2#32
  let v1428 : BitVec 32 := Scalar.muli arg17 c2_i32_583
  let c0_i32_584 : BitVec 32 := 0#32
  let v1429 : BitVec 32 := Scalar.addi v1428 c0_i32_584
  let c64_i32_600 : BitVec 32 := 64#32
  let v1446 : BitVec 32 := Scalar.muli v1429 c64_i32_600
  v1446
@[reducible] def k1_t6_loop : Scf.Loop 32 :=
  let c0_i32_602 : BitVec 32 := 0#32
  let c3_i32 : BitVec 32 := 3#32
  let v1449 : BitVec 32 := Scalar.addi c0_i32_602 c3_i32
  let c1_i32_603 : BitVec 32 := 1#32
  ⟨c0_i32_602, v1449, c1_i32_603⟩
def k1_off65 (k1_t5 : Fin k1_t5_loop.trips) (k1_t6 : Fin k1_t6_loop.trips) : Fin 1 → Nat :=
  let c1024_i32_601 : BitVec 32 := 1024#32
  let c0_i32_571 : BitVec 32 := 0#32
  let c1_i32_573 : BitVec 32 := 1#32
  let arg17 : BitVec 32 := Scf.iv c0_i32_571 c1_i32_573 k1_t5
  let c2_i32_583 : BitVec 32 := 2#32
  let v1428 : BitVec 32 := Scalar.muli arg17 c2_i32_583
  let c0_i32_584 : BitVec 32 := 0#32
  let v1429 : BitVec 32 := Scalar.addi v1428 c0_i32_584
  let c64_i32_600 : BitVec 32 := 64#32
  let v1446 : BitVec 32 := Scalar.muli v1429 c64_i32_600
  let v1447 : BitVec 32 := v1446
  let v1448 : BitVec 32 := Scalar.addi c1024_i32_601 v1447
  let c0_i32_602 : BitVec 32 := 0#32
  let c1_i32_603 : BitVec 32 := 1#32
  let arg18 : BitVec 32 := Scf.iv c0_i32_602 c1_i32_603 k1_t6
  let c16_i32_690 : BitVec 32 := 16#32
  let v1659 : BitVec 32 := Scalar.muli arg18 c16_i32_690
  let v1660 : BitVec 32 := Scalar.addi v1448 v1659
  let v1661 : Index := Scalar.indexCast v1660
  ![v1661.toNat]
def k1_mult156 (v1667 : BitVec 32) : BitVec 32 :=
  let c0_i32_693 : BitVec 32 := 0#32
  let v1668 : BitVec 32 := Scalar.addi v1667 c0_i32_693
  v1668

def k1_off66 (k1_t6 : Fin k1_t6_loop.trips) (v1667 : BitVec 32) (c0_i32_693 : BitVec 32) : Fin 3 → Nat :=
  let c0_i32_694 : BitVec 32 := 0#32
  let v1670 : Index := Scalar.indexCast c0_i32_694
  let c0_i32_602 : BitVec 32 := 0#32
  let c1_i32_603 : BitVec 32 := 1#32
  let arg18 : BitVec 32 := Scf.iv c0_i32_602 c1_i32_603 k1_t6
  let c16_i32_691 : BitVec 32 := 16#32
  let v1664 : BitVec 32 := Scalar.muli arg18 c16_i32_691
  let c0_i32_692 : BitVec 32 := 0#32
  let v1665 : BitVec 32 := Scalar.addi v1664 c0_i32_692
  let v1671 : Index := Scalar.indexCast v1665
  let v1668 : BitVec 32 := Scalar.addi v1667 c0_i32_693
  let v1669 : BitVec 32 := v1668
  let v1672 : Index := Scalar.indexCast v1669
  ![0, v1671.toNat, v1672.toNat]
def k1_mult157 (v1667 : BitVec 32) : BitVec 32 :=
  let c16_i32_695 : BitVec 32 := 16#32
  let v1676 : BitVec 32 := Scalar.addi v1667 c16_i32_695
  v1676
def k1_mult158 (v1667 : BitVec 32) : BitVec 32 :=
  let c32_i32_697 : BitVec 32 := 32#32
  let v1684 : BitVec 32 := Scalar.addi v1667 c32_i32_697
  v1684
def k1_mult159 (v1667 : BitVec 32) : BitVec 32 :=
  let c48_i32_699 : BitVec 32 := 48#32
  let v1692 : BitVec 32 := Scalar.addi v1667 c48_i32_699
  v1692

def k1_chk37 (k1_t6 : Fin k1_t6_loop.trips) (v1667 : BitVec 32) : Prop :=
  (16 ∣ (k1_mult156 v1667).toNat) ∧
  (∀ (r : Fin 4), ∀ a, (k1_off66 k1_t6 v1667 (BitVec.ofNat 32 (16 * r.val))) a + S1x1x16.size a ≤ S2x50x128.size a) ∧
  (16 ∣ (k1_mult157 v1667).toNat) ∧
  (16 ∣ (k1_mult158 v1667).toNat) ∧
  (16 ∣ (k1_mult159 v1667).toNat)
instance k1_chk37.dec : ∀ (k1_t6 : Fin k1_t6_loop.trips) (v1667 : BitVec 32), Decidable (k1_chk37 k1_t6 v1667) := fun k1_t6 v1667 => decidable_of_iff' _ (Iff.of_eq (k1_chk37.eq_1 k1_t6 v1667))
theorem k1_mult156_dvd : ∀ (k1_t6 : Fin k1_t6_loop.trips) (v1667 : BitVec 32) (k1_hw37 : k1_chk37 k1_t6 v1667), 16 ∣ (k1_mult156 v1667).toNat := fun k1_t6 v1667 k1_hw37 => k1_hw37.1
theorem k1_off66_inb : ∀ (k1_t6 : Fin k1_t6_loop.trips) (v1667 : BitVec 32) (k1_hw37 : k1_chk37 k1_t6 v1667), ∀ (r : Fin 4), ∀ a, (k1_off66 k1_t6 v1667 (BitVec.ofNat 32 (16 * r.val))) a + S1x1x16.size a ≤ S2x50x128.size a := fun k1_t6 v1667 k1_hw37 r => k1_hw37.2.1 r
theorem k1_mult157_dvd : ∀ (k1_t6 : Fin k1_t6_loop.trips) (v1667 : BitVec 32) (k1_hw37 : k1_chk37 k1_t6 v1667), 16 ∣ (k1_mult157 v1667).toNat := fun k1_t6 v1667 k1_hw37 => k1_hw37.2.2.1
theorem k1_mult158_dvd : ∀ (k1_t6 : Fin k1_t6_loop.trips) (v1667 : BitVec 32) (k1_hw37 : k1_chk37 k1_t6 v1667), 16 ∣ (k1_mult158 v1667).toNat := fun k1_t6 v1667 k1_hw37 => k1_hw37.2.2.2.1
theorem k1_mult159_dvd : ∀ (k1_t6 : Fin k1_t6_loop.trips) (v1667 : BitVec 32) (k1_hw37 : k1_chk37 k1_t6 v1667), 16 ∣ (k1_mult159 v1667).toNat := fun k1_t6 v1667 k1_hw37 => k1_hw37.2.2.2.2

def k1_mult160 (v1703 : BitVec 32) : BitVec 32 :=
  let c0_i32_703 : BitVec 32 := 0#32
  let v1704 : BitVec 32 := Scalar.addi v1703 c0_i32_703
  v1704

def k1_off67 (k1_t6 : Fin k1_t6_loop.trips) (v1703 : BitVec 32) (c0_i32_703 : BitVec 32) : Fin 3 → Nat :=
  let c0_i32_704 : BitVec 32 := 0#32
  let v1706 : Index := Scalar.indexCast c0_i32_704
  let c0_i32_602 : BitVec 32 := 0#32
  let c1_i32_603 : BitVec 32 := 1#32
  let arg18 : BitVec 32 := Scf.iv c0_i32_602 c1_i32_603 k1_t6
  let c16_i32_701 : BitVec 32 := 16#32
  let v1700 : BitVec 32 := Scalar.muli arg18 c16_i32_701
  let c1_i32_702 : BitVec 32 := 1#32
  let v1701 : BitVec 32 := Scalar.addi v1700 c1_i32_702
  let v1707 : Index := Scalar.indexCast v1701
  let v1704 : BitVec 32 := Scalar.addi v1703 c0_i32_703
  let v1705 : BitVec 32 := v1704
  let v1708 : Index := Scalar.indexCast v1705
  ![0, v1707.toNat, v1708.toNat]
def k1_mult161 (v1703 : BitVec 32) : BitVec 32 :=
  let c16_i32_705 : BitVec 32 := 16#32
  let v1712 : BitVec 32 := Scalar.addi v1703 c16_i32_705
  v1712
def k1_mult162 (v1703 : BitVec 32) : BitVec 32 :=
  let c32_i32_707 : BitVec 32 := 32#32
  let v1720 : BitVec 32 := Scalar.addi v1703 c32_i32_707
  v1720
def k1_mult163 (v1703 : BitVec 32) : BitVec 32 :=
  let c48_i32_709 : BitVec 32 := 48#32
  let v1728 : BitVec 32 := Scalar.addi v1703 c48_i32_709
  v1728

def k1_chk38 (k1_t6 : Fin k1_t6_loop.trips) (v1703 : BitVec 32) : Prop :=
  (16 ∣ (k1_mult160 v1703).toNat) ∧
  (∀ (r : Fin 4), ∀ a, (k1_off67 k1_t6 v1703 (BitVec.ofNat 32 (16 * r.val))) a + S1x1x16.size a ≤ S2x50x128.size a) ∧
  (16 ∣ (k1_mult161 v1703).toNat) ∧
  (16 ∣ (k1_mult162 v1703).toNat) ∧
  (16 ∣ (k1_mult163 v1703).toNat)
instance k1_chk38.dec : ∀ (k1_t6 : Fin k1_t6_loop.trips) (v1703 : BitVec 32), Decidable (k1_chk38 k1_t6 v1703) := fun k1_t6 v1703 => decidable_of_iff' _ (Iff.of_eq (k1_chk38.eq_1 k1_t6 v1703))
theorem k1_mult160_dvd : ∀ (k1_t6 : Fin k1_t6_loop.trips) (v1703 : BitVec 32) (k1_hw38 : k1_chk38 k1_t6 v1703), 16 ∣ (k1_mult160 v1703).toNat := fun k1_t6 v1703 k1_hw38 => k1_hw38.1
theorem k1_off67_inb : ∀ (k1_t6 : Fin k1_t6_loop.trips) (v1703 : BitVec 32) (k1_hw38 : k1_chk38 k1_t6 v1703), ∀ (r : Fin 4), ∀ a, (k1_off67 k1_t6 v1703 (BitVec.ofNat 32 (16 * r.val))) a + S1x1x16.size a ≤ S2x50x128.size a := fun k1_t6 v1703 k1_hw38 r => k1_hw38.2.1 r
theorem k1_mult161_dvd : ∀ (k1_t6 : Fin k1_t6_loop.trips) (v1703 : BitVec 32) (k1_hw38 : k1_chk38 k1_t6 v1703), 16 ∣ (k1_mult161 v1703).toNat := fun k1_t6 v1703 k1_hw38 => k1_hw38.2.2.1
theorem k1_mult162_dvd : ∀ (k1_t6 : Fin k1_t6_loop.trips) (v1703 : BitVec 32) (k1_hw38 : k1_chk38 k1_t6 v1703), 16 ∣ (k1_mult162 v1703).toNat := fun k1_t6 v1703 k1_hw38 => k1_hw38.2.2.2.1
theorem k1_mult163_dvd : ∀ (k1_t6 : Fin k1_t6_loop.trips) (v1703 : BitVec 32) (k1_hw38 : k1_chk38 k1_t6 v1703), 16 ∣ (k1_mult163 v1703).toNat := fun k1_t6 v1703 k1_hw38 => k1_hw38.2.2.2.2

def k1_mult164 (v1739 : BitVec 32) : BitVec 32 :=
  let c0_i32_713 : BitVec 32 := 0#32
  let v1740 : BitVec 32 := Scalar.addi v1739 c0_i32_713
  v1740

def k1_off68 (k1_t6 : Fin k1_t6_loop.trips) (v1739 : BitVec 32) (c0_i32_713 : BitVec 32) : Fin 3 → Nat :=
  let c0_i32_714 : BitVec 32 := 0#32
  let v1742 : Index := Scalar.indexCast c0_i32_714
  let c0_i32_602 : BitVec 32 := 0#32
  let c1_i32_603 : BitVec 32 := 1#32
  let arg18 : BitVec 32 := Scf.iv c0_i32_602 c1_i32_603 k1_t6
  let c16_i32_711 : BitVec 32 := 16#32
  let v1736 : BitVec 32 := Scalar.muli arg18 c16_i32_711
  let c2_i32_712 : BitVec 32 := 2#32
  let v1737 : BitVec 32 := Scalar.addi v1736 c2_i32_712
  let v1743 : Index := Scalar.indexCast v1737
  let v1740 : BitVec 32 := Scalar.addi v1739 c0_i32_713
  let v1741 : BitVec 32 := v1740
  let v1744 : Index := Scalar.indexCast v1741
  ![0, v1743.toNat, v1744.toNat]
def k1_mult165 (v1739 : BitVec 32) : BitVec 32 :=
  let c16_i32_715 : BitVec 32 := 16#32
  let v1748 : BitVec 32 := Scalar.addi v1739 c16_i32_715
  v1748
def k1_mult166 (v1739 : BitVec 32) : BitVec 32 :=
  let c32_i32_717 : BitVec 32 := 32#32
  let v1756 : BitVec 32 := Scalar.addi v1739 c32_i32_717
  v1756
def k1_mult167 (v1739 : BitVec 32) : BitVec 32 :=
  let c48_i32_719 : BitVec 32 := 48#32
  let v1764 : BitVec 32 := Scalar.addi v1739 c48_i32_719
  v1764

def k1_chk39 (k1_t6 : Fin k1_t6_loop.trips) (v1739 : BitVec 32) : Prop :=
  (16 ∣ (k1_mult164 v1739).toNat) ∧
  (∀ (r : Fin 4), ∀ a, (k1_off68 k1_t6 v1739 (BitVec.ofNat 32 (16 * r.val))) a + S1x1x16.size a ≤ S2x50x128.size a) ∧
  (16 ∣ (k1_mult165 v1739).toNat) ∧
  (16 ∣ (k1_mult166 v1739).toNat) ∧
  (16 ∣ (k1_mult167 v1739).toNat)
instance k1_chk39.dec : ∀ (k1_t6 : Fin k1_t6_loop.trips) (v1739 : BitVec 32), Decidable (k1_chk39 k1_t6 v1739) := fun k1_t6 v1739 => decidable_of_iff' _ (Iff.of_eq (k1_chk39.eq_1 k1_t6 v1739))
theorem k1_mult164_dvd : ∀ (k1_t6 : Fin k1_t6_loop.trips) (v1739 : BitVec 32) (k1_hw39 : k1_chk39 k1_t6 v1739), 16 ∣ (k1_mult164 v1739).toNat := fun k1_t6 v1739 k1_hw39 => k1_hw39.1
theorem k1_off68_inb : ∀ (k1_t6 : Fin k1_t6_loop.trips) (v1739 : BitVec 32) (k1_hw39 : k1_chk39 k1_t6 v1739), ∀ (r : Fin 4), ∀ a, (k1_off68 k1_t6 v1739 (BitVec.ofNat 32 (16 * r.val))) a + S1x1x16.size a ≤ S2x50x128.size a := fun k1_t6 v1739 k1_hw39 r => k1_hw39.2.1 r
theorem k1_mult165_dvd : ∀ (k1_t6 : Fin k1_t6_loop.trips) (v1739 : BitVec 32) (k1_hw39 : k1_chk39 k1_t6 v1739), 16 ∣ (k1_mult165 v1739).toNat := fun k1_t6 v1739 k1_hw39 => k1_hw39.2.2.1
theorem k1_mult166_dvd : ∀ (k1_t6 : Fin k1_t6_loop.trips) (v1739 : BitVec 32) (k1_hw39 : k1_chk39 k1_t6 v1739), 16 ∣ (k1_mult166 v1739).toNat := fun k1_t6 v1739 k1_hw39 => k1_hw39.2.2.2.1
theorem k1_mult167_dvd : ∀ (k1_t6 : Fin k1_t6_loop.trips) (v1739 : BitVec 32) (k1_hw39 : k1_chk39 k1_t6 v1739), 16 ∣ (k1_mult167 v1739).toNat := fun k1_t6 v1739 k1_hw39 => k1_hw39.2.2.2.2

def k1_mult168 (v1775 : BitVec 32) : BitVec 32 :=
  let c0_i32_723 : BitVec 32 := 0#32
  let v1776 : BitVec 32 := Scalar.addi v1775 c0_i32_723
  v1776

def k1_off69 (k1_t6 : Fin k1_t6_loop.trips) (v1775 : BitVec 32) (c0_i32_723 : BitVec 32) : Fin 3 → Nat :=
  let c0_i32_724 : BitVec 32 := 0#32
  let v1778 : Index := Scalar.indexCast c0_i32_724
  let c0_i32_602 : BitVec 32 := 0#32
  let c1_i32_603 : BitVec 32 := 1#32
  let arg18 : BitVec 32 := Scf.iv c0_i32_602 c1_i32_603 k1_t6
  let c16_i32_721 : BitVec 32 := 16#32
  let v1772 : BitVec 32 := Scalar.muli arg18 c16_i32_721
  let c3_i32_722 : BitVec 32 := 3#32
  let v1773 : BitVec 32 := Scalar.addi v1772 c3_i32_722
  let v1779 : Index := Scalar.indexCast v1773
  let v1776 : BitVec 32 := Scalar.addi v1775 c0_i32_723
  let v1777 : BitVec 32 := v1776
  let v1780 : Index := Scalar.indexCast v1777
  ![0, v1779.toNat, v1780.toNat]
def k1_mult169 (v1775 : BitVec 32) : BitVec 32 :=
  let c16_i32_725 : BitVec 32 := 16#32
  let v1784 : BitVec 32 := Scalar.addi v1775 c16_i32_725
  v1784
def k1_mult170 (v1775 : BitVec 32) : BitVec 32 :=
  let c32_i32_727 : BitVec 32 := 32#32
  let v1792 : BitVec 32 := Scalar.addi v1775 c32_i32_727
  v1792
def k1_mult171 (v1775 : BitVec 32) : BitVec 32 :=
  let c48_i32_729 : BitVec 32 := 48#32
  let v1800 : BitVec 32 := Scalar.addi v1775 c48_i32_729
  v1800

def k1_chk40 (k1_t6 : Fin k1_t6_loop.trips) (v1775 : BitVec 32) : Prop :=
  (16 ∣ (k1_mult168 v1775).toNat) ∧
  (∀ (r : Fin 4), ∀ a, (k1_off69 k1_t6 v1775 (BitVec.ofNat 32 (16 * r.val))) a + S1x1x16.size a ≤ S2x50x128.size a) ∧
  (16 ∣ (k1_mult169 v1775).toNat) ∧
  (16 ∣ (k1_mult170 v1775).toNat) ∧
  (16 ∣ (k1_mult171 v1775).toNat)
instance k1_chk40.dec : ∀ (k1_t6 : Fin k1_t6_loop.trips) (v1775 : BitVec 32), Decidable (k1_chk40 k1_t6 v1775) := fun k1_t6 v1775 => decidable_of_iff' _ (Iff.of_eq (k1_chk40.eq_1 k1_t6 v1775))
theorem k1_mult168_dvd : ∀ (k1_t6 : Fin k1_t6_loop.trips) (v1775 : BitVec 32) (k1_hw40 : k1_chk40 k1_t6 v1775), 16 ∣ (k1_mult168 v1775).toNat := fun k1_t6 v1775 k1_hw40 => k1_hw40.1
theorem k1_off69_inb : ∀ (k1_t6 : Fin k1_t6_loop.trips) (v1775 : BitVec 32) (k1_hw40 : k1_chk40 k1_t6 v1775), ∀ (r : Fin 4), ∀ a, (k1_off69 k1_t6 v1775 (BitVec.ofNat 32 (16 * r.val))) a + S1x1x16.size a ≤ S2x50x128.size a := fun k1_t6 v1775 k1_hw40 r => k1_hw40.2.1 r
theorem k1_mult169_dvd : ∀ (k1_t6 : Fin k1_t6_loop.trips) (v1775 : BitVec 32) (k1_hw40 : k1_chk40 k1_t6 v1775), 16 ∣ (k1_mult169 v1775).toNat := fun k1_t6 v1775 k1_hw40 => k1_hw40.2.2.1
theorem k1_mult170_dvd : ∀ (k1_t6 : Fin k1_t6_loop.trips) (v1775 : BitVec 32) (k1_hw40 : k1_chk40 k1_t6 v1775), 16 ∣ (k1_mult170 v1775).toNat := fun k1_t6 v1775 k1_hw40 => k1_hw40.2.2.2.1
theorem k1_mult171_dvd : ∀ (k1_t6 : Fin k1_t6_loop.trips) (v1775 : BitVec 32) (k1_hw40 : k1_chk40 k1_t6 v1775), 16 ∣ (k1_mult171 v1775).toNat := fun k1_t6 v1775 k1_hw40 => k1_hw40.2.2.2.2

def k1_mult172 (v1811 : BitVec 32) : BitVec 32 :=
  let c0_i32_733 : BitVec 32 := 0#32
  let v1812 : BitVec 32 := Scalar.addi v1811 c0_i32_733
  v1812

def k1_off70 (k1_t6 : Fin k1_t6_loop.trips) (v1811 : BitVec 32) (c0_i32_733 : BitVec 32) : Fin 3 → Nat :=
  let c0_i32_734 : BitVec 32 := 0#32
  let v1814 : Index := Scalar.indexCast c0_i32_734
  let c0_i32_602 : BitVec 32 := 0#32
  let c1_i32_603 : BitVec 32 := 1#32
  let arg18 : BitVec 32 := Scf.iv c0_i32_602 c1_i32_603 k1_t6
  let c16_i32_731 : BitVec 32 := 16#32
  let v1808 : BitVec 32 := Scalar.muli arg18 c16_i32_731
  let c4_i32_732 : BitVec 32 := 4#32
  let v1809 : BitVec 32 := Scalar.addi v1808 c4_i32_732
  let v1815 : Index := Scalar.indexCast v1809
  let v1812 : BitVec 32 := Scalar.addi v1811 c0_i32_733
  let v1813 : BitVec 32 := v1812
  let v1816 : Index := Scalar.indexCast v1813
  ![0, v1815.toNat, v1816.toNat]
def k1_mult173 (v1811 : BitVec 32) : BitVec 32 :=
  let c16_i32_735 : BitVec 32 := 16#32
  let v1820 : BitVec 32 := Scalar.addi v1811 c16_i32_735
  v1820
def k1_mult174 (v1811 : BitVec 32) : BitVec 32 :=
  let c32_i32_737 : BitVec 32 := 32#32
  let v1828 : BitVec 32 := Scalar.addi v1811 c32_i32_737
  v1828
def k1_mult175 (v1811 : BitVec 32) : BitVec 32 :=
  let c48_i32_739 : BitVec 32 := 48#32
  let v1836 : BitVec 32 := Scalar.addi v1811 c48_i32_739
  v1836

def k1_chk41 (k1_t6 : Fin k1_t6_loop.trips) (v1811 : BitVec 32) : Prop :=
  (16 ∣ (k1_mult172 v1811).toNat) ∧
  (∀ (r : Fin 4), ∀ a, (k1_off70 k1_t6 v1811 (BitVec.ofNat 32 (16 * r.val))) a + S1x1x16.size a ≤ S2x50x128.size a) ∧
  (16 ∣ (k1_mult173 v1811).toNat) ∧
  (16 ∣ (k1_mult174 v1811).toNat) ∧
  (16 ∣ (k1_mult175 v1811).toNat)
instance k1_chk41.dec : ∀ (k1_t6 : Fin k1_t6_loop.trips) (v1811 : BitVec 32), Decidable (k1_chk41 k1_t6 v1811) := fun k1_t6 v1811 => decidable_of_iff' _ (Iff.of_eq (k1_chk41.eq_1 k1_t6 v1811))
theorem k1_mult172_dvd : ∀ (k1_t6 : Fin k1_t6_loop.trips) (v1811 : BitVec 32) (k1_hw41 : k1_chk41 k1_t6 v1811), 16 ∣ (k1_mult172 v1811).toNat := fun k1_t6 v1811 k1_hw41 => k1_hw41.1
theorem k1_off70_inb : ∀ (k1_t6 : Fin k1_t6_loop.trips) (v1811 : BitVec 32) (k1_hw41 : k1_chk41 k1_t6 v1811), ∀ (r : Fin 4), ∀ a, (k1_off70 k1_t6 v1811 (BitVec.ofNat 32 (16 * r.val))) a + S1x1x16.size a ≤ S2x50x128.size a := fun k1_t6 v1811 k1_hw41 r => k1_hw41.2.1 r
theorem k1_mult173_dvd : ∀ (k1_t6 : Fin k1_t6_loop.trips) (v1811 : BitVec 32) (k1_hw41 : k1_chk41 k1_t6 v1811), 16 ∣ (k1_mult173 v1811).toNat := fun k1_t6 v1811 k1_hw41 => k1_hw41.2.2.1
theorem k1_mult174_dvd : ∀ (k1_t6 : Fin k1_t6_loop.trips) (v1811 : BitVec 32) (k1_hw41 : k1_chk41 k1_t6 v1811), 16 ∣ (k1_mult174 v1811).toNat := fun k1_t6 v1811 k1_hw41 => k1_hw41.2.2.2.1
theorem k1_mult175_dvd : ∀ (k1_t6 : Fin k1_t6_loop.trips) (v1811 : BitVec 32) (k1_hw41 : k1_chk41 k1_t6 v1811), 16 ∣ (k1_mult175 v1811).toNat := fun k1_t6 v1811 k1_hw41 => k1_hw41.2.2.2.2

def k1_mult176 (v1847 : BitVec 32) : BitVec 32 :=
  let c0_i32_742 : BitVec 32 := 0#32
  let v1848 : BitVec 32 := Scalar.addi v1847 c0_i32_742
  v1848

def k1_off71 (k1_t6 : Fin k1_t6_loop.trips) (v1847 : BitVec 32) (c0_i32_742 : BitVec 32) : Fin 3 → Nat :=
  let c0_i32_743 : BitVec 32 := 0#32
  let v1850 : Index := Scalar.indexCast c0_i32_743
  let c0_i32_602 : BitVec 32 := 0#32
  let c1_i32_603 : BitVec 32 := 1#32
  let arg18 : BitVec 32 := Scf.iv c0_i32_602 c1_i32_603 k1_t6
  let c16_i32_741 : BitVec 32 := 16#32
  let v1844 : BitVec 32 := Scalar.muli arg18 c16_i32_741
  let c5_i32 : BitVec 32 := 5#32
  let v1845 : BitVec 32 := Scalar.addi v1844 c5_i32
  let v1851 : Index := Scalar.indexCast v1845
  let v1848 : BitVec 32 := Scalar.addi v1847 c0_i32_742
  let v1849 : BitVec 32 := v1848
  let v1852 : Index := Scalar.indexCast v1849
  ![0, v1851.toNat, v1852.toNat]
def k1_mult177 (v1847 : BitVec 32) : BitVec 32 :=
  let c16_i32_744 : BitVec 32 := 16#32
  let v1856 : BitVec 32 := Scalar.addi v1847 c16_i32_744
  v1856
def k1_mult178 (v1847 : BitVec 32) : BitVec 32 :=
  let c32_i32_746 : BitVec 32 := 32#32
  let v1864 : BitVec 32 := Scalar.addi v1847 c32_i32_746
  v1864
def k1_mult179 (v1847 : BitVec 32) : BitVec 32 :=
  let c48_i32_748 : BitVec 32 := 48#32
  let v1872 : BitVec 32 := Scalar.addi v1847 c48_i32_748
  v1872

def k1_chk42 (k1_t6 : Fin k1_t6_loop.trips) (v1847 : BitVec 32) : Prop :=
  (16 ∣ (k1_mult176 v1847).toNat) ∧
  (∀ (r : Fin 4), ∀ a, (k1_off71 k1_t6 v1847 (BitVec.ofNat 32 (16 * r.val))) a + S1x1x16.size a ≤ S2x50x128.size a) ∧
  (16 ∣ (k1_mult177 v1847).toNat) ∧
  (16 ∣ (k1_mult178 v1847).toNat) ∧
  (16 ∣ (k1_mult179 v1847).toNat)
instance k1_chk42.dec : ∀ (k1_t6 : Fin k1_t6_loop.trips) (v1847 : BitVec 32), Decidable (k1_chk42 k1_t6 v1847) := fun k1_t6 v1847 => decidable_of_iff' _ (Iff.of_eq (k1_chk42.eq_1 k1_t6 v1847))
theorem k1_mult176_dvd : ∀ (k1_t6 : Fin k1_t6_loop.trips) (v1847 : BitVec 32) (k1_hw42 : k1_chk42 k1_t6 v1847), 16 ∣ (k1_mult176 v1847).toNat := fun k1_t6 v1847 k1_hw42 => k1_hw42.1
theorem k1_off71_inb : ∀ (k1_t6 : Fin k1_t6_loop.trips) (v1847 : BitVec 32) (k1_hw42 : k1_chk42 k1_t6 v1847), ∀ (r : Fin 4), ∀ a, (k1_off71 k1_t6 v1847 (BitVec.ofNat 32 (16 * r.val))) a + S1x1x16.size a ≤ S2x50x128.size a := fun k1_t6 v1847 k1_hw42 r => k1_hw42.2.1 r
theorem k1_mult177_dvd : ∀ (k1_t6 : Fin k1_t6_loop.trips) (v1847 : BitVec 32) (k1_hw42 : k1_chk42 k1_t6 v1847), 16 ∣ (k1_mult177 v1847).toNat := fun k1_t6 v1847 k1_hw42 => k1_hw42.2.2.1
theorem k1_mult178_dvd : ∀ (k1_t6 : Fin k1_t6_loop.trips) (v1847 : BitVec 32) (k1_hw42 : k1_chk42 k1_t6 v1847), 16 ∣ (k1_mult178 v1847).toNat := fun k1_t6 v1847 k1_hw42 => k1_hw42.2.2.2.1
theorem k1_mult179_dvd : ∀ (k1_t6 : Fin k1_t6_loop.trips) (v1847 : BitVec 32) (k1_hw42 : k1_chk42 k1_t6 v1847), 16 ∣ (k1_mult179 v1847).toNat := fun k1_t6 v1847 k1_hw42 => k1_hw42.2.2.2.2

def k1_mult180 (v1883 : BitVec 32) : BitVec 32 :=
  let c0_i32_752 : BitVec 32 := 0#32
  let v1884 : BitVec 32 := Scalar.addi v1883 c0_i32_752
  v1884

def k1_off72 (k1_t6 : Fin k1_t6_loop.trips) (v1883 : BitVec 32) (c0_i32_752 : BitVec 32) : Fin 3 → Nat :=
  let c0_i32_753 : BitVec 32 := 0#32
  let v1886 : Index := Scalar.indexCast c0_i32_753
  let c0_i32_602 : BitVec 32 := 0#32
  let c1_i32_603 : BitVec 32 := 1#32
  let arg18 : BitVec 32 := Scf.iv c0_i32_602 c1_i32_603 k1_t6
  let c16_i32_750 : BitVec 32 := 16#32
  let v1880 : BitVec 32 := Scalar.muli arg18 c16_i32_750
  let c6_i32_751 : BitVec 32 := 6#32
  let v1881 : BitVec 32 := Scalar.addi v1880 c6_i32_751
  let v1887 : Index := Scalar.indexCast v1881
  let v1884 : BitVec 32 := Scalar.addi v1883 c0_i32_752
  let v1885 : BitVec 32 := v1884
  let v1888 : Index := Scalar.indexCast v1885
  ![0, v1887.toNat, v1888.toNat]
def k1_mult181 (v1883 : BitVec 32) : BitVec 32 :=
  let c16_i32_754 : BitVec 32 := 16#32
  let v1892 : BitVec 32 := Scalar.addi v1883 c16_i32_754
  v1892
def k1_mult182 (v1883 : BitVec 32) : BitVec 32 :=
  let c32_i32_756 : BitVec 32 := 32#32
  let v1900 : BitVec 32 := Scalar.addi v1883 c32_i32_756
  v1900
def k1_mult183 (v1883 : BitVec 32) : BitVec 32 :=
  let c48_i32_758 : BitVec 32 := 48#32
  let v1908 : BitVec 32 := Scalar.addi v1883 c48_i32_758
  v1908

def k1_chk43 (k1_t6 : Fin k1_t6_loop.trips) (v1883 : BitVec 32) : Prop :=
  (16 ∣ (k1_mult180 v1883).toNat) ∧
  (∀ (r : Fin 4), ∀ a, (k1_off72 k1_t6 v1883 (BitVec.ofNat 32 (16 * r.val))) a + S1x1x16.size a ≤ S2x50x128.size a) ∧
  (16 ∣ (k1_mult181 v1883).toNat) ∧
  (16 ∣ (k1_mult182 v1883).toNat) ∧
  (16 ∣ (k1_mult183 v1883).toNat)
instance k1_chk43.dec : ∀ (k1_t6 : Fin k1_t6_loop.trips) (v1883 : BitVec 32), Decidable (k1_chk43 k1_t6 v1883) := fun k1_t6 v1883 => decidable_of_iff' _ (Iff.of_eq (k1_chk43.eq_1 k1_t6 v1883))
theorem k1_mult180_dvd : ∀ (k1_t6 : Fin k1_t6_loop.trips) (v1883 : BitVec 32) (k1_hw43 : k1_chk43 k1_t6 v1883), 16 ∣ (k1_mult180 v1883).toNat := fun k1_t6 v1883 k1_hw43 => k1_hw43.1
theorem k1_off72_inb : ∀ (k1_t6 : Fin k1_t6_loop.trips) (v1883 : BitVec 32) (k1_hw43 : k1_chk43 k1_t6 v1883), ∀ (r : Fin 4), ∀ a, (k1_off72 k1_t6 v1883 (BitVec.ofNat 32 (16 * r.val))) a + S1x1x16.size a ≤ S2x50x128.size a := fun k1_t6 v1883 k1_hw43 r => k1_hw43.2.1 r
theorem k1_mult181_dvd : ∀ (k1_t6 : Fin k1_t6_loop.trips) (v1883 : BitVec 32) (k1_hw43 : k1_chk43 k1_t6 v1883), 16 ∣ (k1_mult181 v1883).toNat := fun k1_t6 v1883 k1_hw43 => k1_hw43.2.2.1
theorem k1_mult182_dvd : ∀ (k1_t6 : Fin k1_t6_loop.trips) (v1883 : BitVec 32) (k1_hw43 : k1_chk43 k1_t6 v1883), 16 ∣ (k1_mult182 v1883).toNat := fun k1_t6 v1883 k1_hw43 => k1_hw43.2.2.2.1
theorem k1_mult183_dvd : ∀ (k1_t6 : Fin k1_t6_loop.trips) (v1883 : BitVec 32) (k1_hw43 : k1_chk43 k1_t6 v1883), 16 ∣ (k1_mult183 v1883).toNat := fun k1_t6 v1883 k1_hw43 => k1_hw43.2.2.2.2

def k1_mult184 (v1919 : BitVec 32) : BitVec 32 :=
  let c0_i32_762 : BitVec 32 := 0#32
  let v1920 : BitVec 32 := Scalar.addi v1919 c0_i32_762
  v1920

def k1_off73 (k1_t6 : Fin k1_t6_loop.trips) (v1919 : BitVec 32) (c0_i32_762 : BitVec 32) : Fin 3 → Nat :=
  let c0_i32_763 : BitVec 32 := 0#32
  let v1922 : Index := Scalar.indexCast c0_i32_763
  let c0_i32_602 : BitVec 32 := 0#32
  let c1_i32_603 : BitVec 32 := 1#32
  let arg18 : BitVec 32 := Scf.iv c0_i32_602 c1_i32_603 k1_t6
  let c16_i32_760 : BitVec 32 := 16#32
  let v1916 : BitVec 32 := Scalar.muli arg18 c16_i32_760
  let c7_i32_761 : BitVec 32 := 7#32
  let v1917 : BitVec 32 := Scalar.addi v1916 c7_i32_761
  let v1923 : Index := Scalar.indexCast v1917
  let v1920 : BitVec 32 := Scalar.addi v1919 c0_i32_762
  let v1921 : BitVec 32 := v1920
  let v1924 : Index := Scalar.indexCast v1921
  ![0, v1923.toNat, v1924.toNat]
def k1_mult185 (v1919 : BitVec 32) : BitVec 32 :=
  let c16_i32_764 : BitVec 32 := 16#32
  let v1928 : BitVec 32 := Scalar.addi v1919 c16_i32_764
  v1928
def k1_mult186 (v1919 : BitVec 32) : BitVec 32 :=
  let c32_i32_766 : BitVec 32 := 32#32
  let v1936 : BitVec 32 := Scalar.addi v1919 c32_i32_766
  v1936
def k1_mult187 (v1919 : BitVec 32) : BitVec 32 :=
  let c48_i32_768 : BitVec 32 := 48#32
  let v1944 : BitVec 32 := Scalar.addi v1919 c48_i32_768
  v1944

def k1_chk44 (k1_t6 : Fin k1_t6_loop.trips) (v1919 : BitVec 32) : Prop :=
  (16 ∣ (k1_mult184 v1919).toNat) ∧
  (∀ (r : Fin 4), ∀ a, (k1_off73 k1_t6 v1919 (BitVec.ofNat 32 (16 * r.val))) a + S1x1x16.size a ≤ S2x50x128.size a) ∧
  (16 ∣ (k1_mult185 v1919).toNat) ∧
  (16 ∣ (k1_mult186 v1919).toNat) ∧
  (16 ∣ (k1_mult187 v1919).toNat)
instance k1_chk44.dec : ∀ (k1_t6 : Fin k1_t6_loop.trips) (v1919 : BitVec 32), Decidable (k1_chk44 k1_t6 v1919) := fun k1_t6 v1919 => decidable_of_iff' _ (Iff.of_eq (k1_chk44.eq_1 k1_t6 v1919))
theorem k1_mult184_dvd : ∀ (k1_t6 : Fin k1_t6_loop.trips) (v1919 : BitVec 32) (k1_hw44 : k1_chk44 k1_t6 v1919), 16 ∣ (k1_mult184 v1919).toNat := fun k1_t6 v1919 k1_hw44 => k1_hw44.1
theorem k1_off73_inb : ∀ (k1_t6 : Fin k1_t6_loop.trips) (v1919 : BitVec 32) (k1_hw44 : k1_chk44 k1_t6 v1919), ∀ (r : Fin 4), ∀ a, (k1_off73 k1_t6 v1919 (BitVec.ofNat 32 (16 * r.val))) a + S1x1x16.size a ≤ S2x50x128.size a := fun k1_t6 v1919 k1_hw44 r => k1_hw44.2.1 r
theorem k1_mult185_dvd : ∀ (k1_t6 : Fin k1_t6_loop.trips) (v1919 : BitVec 32) (k1_hw44 : k1_chk44 k1_t6 v1919), 16 ∣ (k1_mult185 v1919).toNat := fun k1_t6 v1919 k1_hw44 => k1_hw44.2.2.1
theorem k1_mult186_dvd : ∀ (k1_t6 : Fin k1_t6_loop.trips) (v1919 : BitVec 32) (k1_hw44 : k1_chk44 k1_t6 v1919), 16 ∣ (k1_mult186 v1919).toNat := fun k1_t6 v1919 k1_hw44 => k1_hw44.2.2.2.1
theorem k1_mult187_dvd : ∀ (k1_t6 : Fin k1_t6_loop.trips) (v1919 : BitVec 32) (k1_hw44 : k1_chk44 k1_t6 v1919), 16 ∣ (k1_mult187 v1919).toNat := fun k1_t6 v1919 k1_hw44 => k1_hw44.2.2.2.2

def k1_mult188 (v1955 : BitVec 32) : BitVec 32 :=
  let c0_i32_772 : BitVec 32 := 0#32
  let v1956 : BitVec 32 := Scalar.addi v1955 c0_i32_772
  v1956

def k1_off74 (k1_t6 : Fin k1_t6_loop.trips) (v1955 : BitVec 32) (c0_i32_772 : BitVec 32) : Fin 3 → Nat :=
  let c0_i32_773 : BitVec 32 := 0#32
  let v1958 : Index := Scalar.indexCast c0_i32_773
  let c0_i32_602 : BitVec 32 := 0#32
  let c1_i32_603 : BitVec 32 := 1#32
  let arg18 : BitVec 32 := Scf.iv c0_i32_602 c1_i32_603 k1_t6
  let c16_i32_770 : BitVec 32 := 16#32
  let v1952 : BitVec 32 := Scalar.muli arg18 c16_i32_770
  let c8_i32_771 : BitVec 32 := 8#32
  let v1953 : BitVec 32 := Scalar.addi v1952 c8_i32_771
  let v1959 : Index := Scalar.indexCast v1953
  let v1956 : BitVec 32 := Scalar.addi v1955 c0_i32_772
  let v1957 : BitVec 32 := v1956
  let v1960 : Index := Scalar.indexCast v1957
  ![0, v1959.toNat, v1960.toNat]
def k1_mult189 (v1955 : BitVec 32) : BitVec 32 :=
  let c16_i32_774 : BitVec 32 := 16#32
  let v1964 : BitVec 32 := Scalar.addi v1955 c16_i32_774
  v1964
def k1_mult190 (v1955 : BitVec 32) : BitVec 32 :=
  let c32_i32_776 : BitVec 32 := 32#32
  let v1972 : BitVec 32 := Scalar.addi v1955 c32_i32_776
  v1972
def k1_mult191 (v1955 : BitVec 32) : BitVec 32 :=
  let c48_i32_778 : BitVec 32 := 48#32
  let v1980 : BitVec 32 := Scalar.addi v1955 c48_i32_778
  v1980

def k1_chk45 (k1_t6 : Fin k1_t6_loop.trips) (v1955 : BitVec 32) : Prop :=
  (16 ∣ (k1_mult188 v1955).toNat) ∧
  (∀ (r : Fin 4), ∀ a, (k1_off74 k1_t6 v1955 (BitVec.ofNat 32 (16 * r.val))) a + S1x1x16.size a ≤ S2x50x128.size a) ∧
  (16 ∣ (k1_mult189 v1955).toNat) ∧
  (16 ∣ (k1_mult190 v1955).toNat) ∧
  (16 ∣ (k1_mult191 v1955).toNat)
instance k1_chk45.dec : ∀ (k1_t6 : Fin k1_t6_loop.trips) (v1955 : BitVec 32), Decidable (k1_chk45 k1_t6 v1955) := fun k1_t6 v1955 => decidable_of_iff' _ (Iff.of_eq (k1_chk45.eq_1 k1_t6 v1955))
theorem k1_mult188_dvd : ∀ (k1_t6 : Fin k1_t6_loop.trips) (v1955 : BitVec 32) (k1_hw45 : k1_chk45 k1_t6 v1955), 16 ∣ (k1_mult188 v1955).toNat := fun k1_t6 v1955 k1_hw45 => k1_hw45.1
theorem k1_off74_inb : ∀ (k1_t6 : Fin k1_t6_loop.trips) (v1955 : BitVec 32) (k1_hw45 : k1_chk45 k1_t6 v1955), ∀ (r : Fin 4), ∀ a, (k1_off74 k1_t6 v1955 (BitVec.ofNat 32 (16 * r.val))) a + S1x1x16.size a ≤ S2x50x128.size a := fun k1_t6 v1955 k1_hw45 r => k1_hw45.2.1 r
theorem k1_mult189_dvd : ∀ (k1_t6 : Fin k1_t6_loop.trips) (v1955 : BitVec 32) (k1_hw45 : k1_chk45 k1_t6 v1955), 16 ∣ (k1_mult189 v1955).toNat := fun k1_t6 v1955 k1_hw45 => k1_hw45.2.2.1
theorem k1_mult190_dvd : ∀ (k1_t6 : Fin k1_t6_loop.trips) (v1955 : BitVec 32) (k1_hw45 : k1_chk45 k1_t6 v1955), 16 ∣ (k1_mult190 v1955).toNat := fun k1_t6 v1955 k1_hw45 => k1_hw45.2.2.2.1
theorem k1_mult191_dvd : ∀ (k1_t6 : Fin k1_t6_loop.trips) (v1955 : BitVec 32) (k1_hw45 : k1_chk45 k1_t6 v1955), 16 ∣ (k1_mult191 v1955).toNat := fun k1_t6 v1955 k1_hw45 => k1_hw45.2.2.2.2

def k1_mult192 (v1991 : BitVec 32) : BitVec 32 :=
  let c0_i32_781 : BitVec 32 := 0#32
  let v1992 : BitVec 32 := Scalar.addi v1991 c0_i32_781
  v1992

def k1_off75 (k1_t6 : Fin k1_t6_loop.trips) (v1991 : BitVec 32) (c0_i32_781 : BitVec 32) : Fin 3 → Nat :=
  let c0_i32_782 : BitVec 32 := 0#32
  let v1994 : Index := Scalar.indexCast c0_i32_782
  let c0_i32_602 : BitVec 32 := 0#32
  let c1_i32_603 : BitVec 32 := 1#32
  let arg18 : BitVec 32 := Scf.iv c0_i32_602 c1_i32_603 k1_t6
  let c16_i32_780 : BitVec 32 := 16#32
  let v1988 : BitVec 32 := Scalar.muli arg18 c16_i32_780
  let c9_i32 : BitVec 32 := 9#32
  let v1989 : BitVec 32 := Scalar.addi v1988 c9_i32
  let v1995 : Index := Scalar.indexCast v1989
  let v1992 : BitVec 32 := Scalar.addi v1991 c0_i32_781
  let v1993 : BitVec 32 := v1992
  let v1996 : Index := Scalar.indexCast v1993
  ![0, v1995.toNat, v1996.toNat]
def k1_mult193 (v1991 : BitVec 32) : BitVec 32 :=
  let c16_i32_783 : BitVec 32 := 16#32
  let v2000 : BitVec 32 := Scalar.addi v1991 c16_i32_783
  v2000
def k1_mult194 (v1991 : BitVec 32) : BitVec 32 :=
  let c32_i32_785 : BitVec 32 := 32#32
  let v2008 : BitVec 32 := Scalar.addi v1991 c32_i32_785
  v2008
def k1_mult195 (v1991 : BitVec 32) : BitVec 32 :=
  let c48_i32_787 : BitVec 32 := 48#32
  let v2016 : BitVec 32 := Scalar.addi v1991 c48_i32_787
  v2016

def k1_chk46 (k1_t6 : Fin k1_t6_loop.trips) (v1991 : BitVec 32) : Prop :=
  (16 ∣ (k1_mult192 v1991).toNat) ∧
  (∀ (r : Fin 4), ∀ a, (k1_off75 k1_t6 v1991 (BitVec.ofNat 32 (16 * r.val))) a + S1x1x16.size a ≤ S2x50x128.size a) ∧
  (16 ∣ (k1_mult193 v1991).toNat) ∧
  (16 ∣ (k1_mult194 v1991).toNat) ∧
  (16 ∣ (k1_mult195 v1991).toNat)
instance k1_chk46.dec : ∀ (k1_t6 : Fin k1_t6_loop.trips) (v1991 : BitVec 32), Decidable (k1_chk46 k1_t6 v1991) := fun k1_t6 v1991 => decidable_of_iff' _ (Iff.of_eq (k1_chk46.eq_1 k1_t6 v1991))
theorem k1_mult192_dvd : ∀ (k1_t6 : Fin k1_t6_loop.trips) (v1991 : BitVec 32) (k1_hw46 : k1_chk46 k1_t6 v1991), 16 ∣ (k1_mult192 v1991).toNat := fun k1_t6 v1991 k1_hw46 => k1_hw46.1
theorem k1_off75_inb : ∀ (k1_t6 : Fin k1_t6_loop.trips) (v1991 : BitVec 32) (k1_hw46 : k1_chk46 k1_t6 v1991), ∀ (r : Fin 4), ∀ a, (k1_off75 k1_t6 v1991 (BitVec.ofNat 32 (16 * r.val))) a + S1x1x16.size a ≤ S2x50x128.size a := fun k1_t6 v1991 k1_hw46 r => k1_hw46.2.1 r
theorem k1_mult193_dvd : ∀ (k1_t6 : Fin k1_t6_loop.trips) (v1991 : BitVec 32) (k1_hw46 : k1_chk46 k1_t6 v1991), 16 ∣ (k1_mult193 v1991).toNat := fun k1_t6 v1991 k1_hw46 => k1_hw46.2.2.1
theorem k1_mult194_dvd : ∀ (k1_t6 : Fin k1_t6_loop.trips) (v1991 : BitVec 32) (k1_hw46 : k1_chk46 k1_t6 v1991), 16 ∣ (k1_mult194 v1991).toNat := fun k1_t6 v1991 k1_hw46 => k1_hw46.2.2.2.1
theorem k1_mult195_dvd : ∀ (k1_t6 : Fin k1_t6_loop.trips) (v1991 : BitVec 32) (k1_hw46 : k1_chk46 k1_t6 v1991), 16 ∣ (k1_mult195 v1991).toNat := fun k1_t6 v1991 k1_hw46 => k1_hw46.2.2.2.2

def k1_mult196 (v2027 : BitVec 32) : BitVec 32 :=
  let c0_i32_790 : BitVec 32 := 0#32
  let v2028 : BitVec 32 := Scalar.addi v2027 c0_i32_790
  v2028

def k1_off76 (k1_t6 : Fin k1_t6_loop.trips) (v2027 : BitVec 32) (c0_i32_790 : BitVec 32) : Fin 3 → Nat :=
  let c0_i32_791 : BitVec 32 := 0#32
  let v2030 : Index := Scalar.indexCast c0_i32_791
  let c0_i32_602 : BitVec 32 := 0#32
  let c1_i32_603 : BitVec 32 := 1#32
  let arg18 : BitVec 32 := Scf.iv c0_i32_602 c1_i32_603 k1_t6
  let c16_i32_789 : BitVec 32 := 16#32
  let v2024 : BitVec 32 := Scalar.muli arg18 c16_i32_789
  let c10_i32 : BitVec 32 := 10#32
  let v2025 : BitVec 32 := Scalar.addi v2024 c10_i32
  let v2031 : Index := Scalar.indexCast v2025
  let v2028 : BitVec 32 := Scalar.addi v2027 c0_i32_790
  let v2029 : BitVec 32 := v2028
  let v2032 : Index := Scalar.indexCast v2029
  ![0, v2031.toNat, v2032.toNat]
def k1_mult197 (v2027 : BitVec 32) : BitVec 32 :=
  let c16_i32_792 : BitVec 32 := 16#32
  let v2036 : BitVec 32 := Scalar.addi v2027 c16_i32_792
  v2036
def k1_mult198 (v2027 : BitVec 32) : BitVec 32 :=
  let c32_i32_794 : BitVec 32 := 32#32
  let v2044 : BitVec 32 := Scalar.addi v2027 c32_i32_794
  v2044
def k1_mult199 (v2027 : BitVec 32) : BitVec 32 :=
  let c48_i32_796 : BitVec 32 := 48#32
  let v2052 : BitVec 32 := Scalar.addi v2027 c48_i32_796
  v2052

def k1_chk47 (k1_t6 : Fin k1_t6_loop.trips) (v2027 : BitVec 32) : Prop :=
  (16 ∣ (k1_mult196 v2027).toNat) ∧
  (∀ (r : Fin 4), ∀ a, (k1_off76 k1_t6 v2027 (BitVec.ofNat 32 (16 * r.val))) a + S1x1x16.size a ≤ S2x50x128.size a) ∧
  (16 ∣ (k1_mult197 v2027).toNat) ∧
  (16 ∣ (k1_mult198 v2027).toNat) ∧
  (16 ∣ (k1_mult199 v2027).toNat)
instance k1_chk47.dec : ∀ (k1_t6 : Fin k1_t6_loop.trips) (v2027 : BitVec 32), Decidable (k1_chk47 k1_t6 v2027) := fun k1_t6 v2027 => decidable_of_iff' _ (Iff.of_eq (k1_chk47.eq_1 k1_t6 v2027))
theorem k1_mult196_dvd : ∀ (k1_t6 : Fin k1_t6_loop.trips) (v2027 : BitVec 32) (k1_hw47 : k1_chk47 k1_t6 v2027), 16 ∣ (k1_mult196 v2027).toNat := fun k1_t6 v2027 k1_hw47 => k1_hw47.1
theorem k1_off76_inb : ∀ (k1_t6 : Fin k1_t6_loop.trips) (v2027 : BitVec 32) (k1_hw47 : k1_chk47 k1_t6 v2027), ∀ (r : Fin 4), ∀ a, (k1_off76 k1_t6 v2027 (BitVec.ofNat 32 (16 * r.val))) a + S1x1x16.size a ≤ S2x50x128.size a := fun k1_t6 v2027 k1_hw47 r => k1_hw47.2.1 r
theorem k1_mult197_dvd : ∀ (k1_t6 : Fin k1_t6_loop.trips) (v2027 : BitVec 32) (k1_hw47 : k1_chk47 k1_t6 v2027), 16 ∣ (k1_mult197 v2027).toNat := fun k1_t6 v2027 k1_hw47 => k1_hw47.2.2.1
theorem k1_mult198_dvd : ∀ (k1_t6 : Fin k1_t6_loop.trips) (v2027 : BitVec 32) (k1_hw47 : k1_chk47 k1_t6 v2027), 16 ∣ (k1_mult198 v2027).toNat := fun k1_t6 v2027 k1_hw47 => k1_hw47.2.2.2.1
theorem k1_mult199_dvd : ∀ (k1_t6 : Fin k1_t6_loop.trips) (v2027 : BitVec 32) (k1_hw47 : k1_chk47 k1_t6 v2027), 16 ∣ (k1_mult199 v2027).toNat := fun k1_t6 v2027 k1_hw47 => k1_hw47.2.2.2.2

def k1_mult200 (v2063 : BitVec 32) : BitVec 32 :=
  let c0_i32_799 : BitVec 32 := 0#32
  let v2064 : BitVec 32 := Scalar.addi v2063 c0_i32_799
  v2064

def k1_off77 (k1_t6 : Fin k1_t6_loop.trips) (v2063 : BitVec 32) (c0_i32_799 : BitVec 32) : Fin 3 → Nat :=
  let c0_i32_800 : BitVec 32 := 0#32
  let v2066 : Index := Scalar.indexCast c0_i32_800
  let c0_i32_602 : BitVec 32 := 0#32
  let c1_i32_603 : BitVec 32 := 1#32
  let arg18 : BitVec 32 := Scf.iv c0_i32_602 c1_i32_603 k1_t6
  let c16_i32_798 : BitVec 32 := 16#32
  let v2060 : BitVec 32 := Scalar.muli arg18 c16_i32_798
  let c11_i32 : BitVec 32 := 11#32
  let v2061 : BitVec 32 := Scalar.addi v2060 c11_i32
  let v2067 : Index := Scalar.indexCast v2061
  let v2064 : BitVec 32 := Scalar.addi v2063 c0_i32_799
  let v2065 : BitVec 32 := v2064
  let v2068 : Index := Scalar.indexCast v2065
  ![0, v2067.toNat, v2068.toNat]
def k1_mult201 (v2063 : BitVec 32) : BitVec 32 :=
  let c16_i32_801 : BitVec 32 := 16#32
  let v2072 : BitVec 32 := Scalar.addi v2063 c16_i32_801
  v2072
def k1_mult202 (v2063 : BitVec 32) : BitVec 32 :=
  let c32_i32_803 : BitVec 32 := 32#32
  let v2080 : BitVec 32 := Scalar.addi v2063 c32_i32_803
  v2080
def k1_mult203 (v2063 : BitVec 32) : BitVec 32 :=
  let c48_i32_805 : BitVec 32 := 48#32
  let v2088 : BitVec 32 := Scalar.addi v2063 c48_i32_805
  v2088

def k1_chk48 (k1_t6 : Fin k1_t6_loop.trips) (v2063 : BitVec 32) : Prop :=
  (16 ∣ (k1_mult200 v2063).toNat) ∧
  (∀ (r : Fin 4), ∀ a, (k1_off77 k1_t6 v2063 (BitVec.ofNat 32 (16 * r.val))) a + S1x1x16.size a ≤ S2x50x128.size a) ∧
  (16 ∣ (k1_mult201 v2063).toNat) ∧
  (16 ∣ (k1_mult202 v2063).toNat) ∧
  (16 ∣ (k1_mult203 v2063).toNat)
instance k1_chk48.dec : ∀ (k1_t6 : Fin k1_t6_loop.trips) (v2063 : BitVec 32), Decidable (k1_chk48 k1_t6 v2063) := fun k1_t6 v2063 => decidable_of_iff' _ (Iff.of_eq (k1_chk48.eq_1 k1_t6 v2063))
theorem k1_mult200_dvd : ∀ (k1_t6 : Fin k1_t6_loop.trips) (v2063 : BitVec 32) (k1_hw48 : k1_chk48 k1_t6 v2063), 16 ∣ (k1_mult200 v2063).toNat := fun k1_t6 v2063 k1_hw48 => k1_hw48.1
theorem k1_off77_inb : ∀ (k1_t6 : Fin k1_t6_loop.trips) (v2063 : BitVec 32) (k1_hw48 : k1_chk48 k1_t6 v2063), ∀ (r : Fin 4), ∀ a, (k1_off77 k1_t6 v2063 (BitVec.ofNat 32 (16 * r.val))) a + S1x1x16.size a ≤ S2x50x128.size a := fun k1_t6 v2063 k1_hw48 r => k1_hw48.2.1 r
theorem k1_mult201_dvd : ∀ (k1_t6 : Fin k1_t6_loop.trips) (v2063 : BitVec 32) (k1_hw48 : k1_chk48 k1_t6 v2063), 16 ∣ (k1_mult201 v2063).toNat := fun k1_t6 v2063 k1_hw48 => k1_hw48.2.2.1
theorem k1_mult202_dvd : ∀ (k1_t6 : Fin k1_t6_loop.trips) (v2063 : BitVec 32) (k1_hw48 : k1_chk48 k1_t6 v2063), 16 ∣ (k1_mult202 v2063).toNat := fun k1_t6 v2063 k1_hw48 => k1_hw48.2.2.2.1
theorem k1_mult203_dvd : ∀ (k1_t6 : Fin k1_t6_loop.trips) (v2063 : BitVec 32) (k1_hw48 : k1_chk48 k1_t6 v2063), 16 ∣ (k1_mult203 v2063).toNat := fun k1_t6 v2063 k1_hw48 => k1_hw48.2.2.2.2

def k1_mult204 (v2099 : BitVec 32) : BitVec 32 :=
  let c0_i32_808 : BitVec 32 := 0#32
  let v2100 : BitVec 32 := Scalar.addi v2099 c0_i32_808
  v2100

def k1_off78 (k1_t6 : Fin k1_t6_loop.trips) (v2099 : BitVec 32) (c0_i32_808 : BitVec 32) : Fin 3 → Nat :=
  let c0_i32_809 : BitVec 32 := 0#32
  let v2102 : Index := Scalar.indexCast c0_i32_809
  let c0_i32_602 : BitVec 32 := 0#32
  let c1_i32_603 : BitVec 32 := 1#32
  let arg18 : BitVec 32 := Scf.iv c0_i32_602 c1_i32_603 k1_t6
  let c16_i32_807 : BitVec 32 := 16#32
  let v2096 : BitVec 32 := Scalar.muli arg18 c16_i32_807
  let c12_i32 : BitVec 32 := 12#32
  let v2097 : BitVec 32 := Scalar.addi v2096 c12_i32
  let v2103 : Index := Scalar.indexCast v2097
  let v2100 : BitVec 32 := Scalar.addi v2099 c0_i32_808
  let v2101 : BitVec 32 := v2100
  let v2104 : Index := Scalar.indexCast v2101
  ![0, v2103.toNat, v2104.toNat]
def k1_mult205 (v2099 : BitVec 32) : BitVec 32 :=
  let c16_i32_810 : BitVec 32 := 16#32
  let v2108 : BitVec 32 := Scalar.addi v2099 c16_i32_810
  v2108
def k1_mult206 (v2099 : BitVec 32) : BitVec 32 :=
  let c32_i32_812 : BitVec 32 := 32#32
  let v2116 : BitVec 32 := Scalar.addi v2099 c32_i32_812
  v2116
def k1_mult207 (v2099 : BitVec 32) : BitVec 32 :=
  let c48_i32_814 : BitVec 32 := 48#32
  let v2124 : BitVec 32 := Scalar.addi v2099 c48_i32_814
  v2124

def k1_chk49 (k1_t6 : Fin k1_t6_loop.trips) (v2099 : BitVec 32) : Prop :=
  (16 ∣ (k1_mult204 v2099).toNat) ∧
  (∀ (r : Fin 4), ∀ a, (k1_off78 k1_t6 v2099 (BitVec.ofNat 32 (16 * r.val))) a + S1x1x16.size a ≤ S2x50x128.size a) ∧
  (16 ∣ (k1_mult205 v2099).toNat) ∧
  (16 ∣ (k1_mult206 v2099).toNat) ∧
  (16 ∣ (k1_mult207 v2099).toNat)
instance k1_chk49.dec : ∀ (k1_t6 : Fin k1_t6_loop.trips) (v2099 : BitVec 32), Decidable (k1_chk49 k1_t6 v2099) := fun k1_t6 v2099 => decidable_of_iff' _ (Iff.of_eq (k1_chk49.eq_1 k1_t6 v2099))
theorem k1_mult204_dvd : ∀ (k1_t6 : Fin k1_t6_loop.trips) (v2099 : BitVec 32) (k1_hw49 : k1_chk49 k1_t6 v2099), 16 ∣ (k1_mult204 v2099).toNat := fun k1_t6 v2099 k1_hw49 => k1_hw49.1
theorem k1_off78_inb : ∀ (k1_t6 : Fin k1_t6_loop.trips) (v2099 : BitVec 32) (k1_hw49 : k1_chk49 k1_t6 v2099), ∀ (r : Fin 4), ∀ a, (k1_off78 k1_t6 v2099 (BitVec.ofNat 32 (16 * r.val))) a + S1x1x16.size a ≤ S2x50x128.size a := fun k1_t6 v2099 k1_hw49 r => k1_hw49.2.1 r
theorem k1_mult205_dvd : ∀ (k1_t6 : Fin k1_t6_loop.trips) (v2099 : BitVec 32) (k1_hw49 : k1_chk49 k1_t6 v2099), 16 ∣ (k1_mult205 v2099).toNat := fun k1_t6 v2099 k1_hw49 => k1_hw49.2.2.1
theorem k1_mult206_dvd : ∀ (k1_t6 : Fin k1_t6_loop.trips) (v2099 : BitVec 32) (k1_hw49 : k1_chk49 k1_t6 v2099), 16 ∣ (k1_mult206 v2099).toNat := fun k1_t6 v2099 k1_hw49 => k1_hw49.2.2.2.1
theorem k1_mult207_dvd : ∀ (k1_t6 : Fin k1_t6_loop.trips) (v2099 : BitVec 32) (k1_hw49 : k1_chk49 k1_t6 v2099), 16 ∣ (k1_mult207 v2099).toNat := fun k1_t6 v2099 k1_hw49 => k1_hw49.2.2.2.2

def k1_mult208 (v2135 : BitVec 32) : BitVec 32 :=
  let c0_i32_817 : BitVec 32 := 0#32
  let v2136 : BitVec 32 := Scalar.addi v2135 c0_i32_817
  v2136

def k1_off79 (k1_t6 : Fin k1_t6_loop.trips) (v2135 : BitVec 32) (c0_i32_817 : BitVec 32) : Fin 3 → Nat :=
  let c0_i32_818 : BitVec 32 := 0#32
  let v2138 : Index := Scalar.indexCast c0_i32_818
  let c0_i32_602 : BitVec 32 := 0#32
  let c1_i32_603 : BitVec 32 := 1#32
  let arg18 : BitVec 32 := Scf.iv c0_i32_602 c1_i32_603 k1_t6
  let c16_i32_816 : BitVec 32 := 16#32
  let v2132 : BitVec 32 := Scalar.muli arg18 c16_i32_816
  let c13_i32 : BitVec 32 := 13#32
  let v2133 : BitVec 32 := Scalar.addi v2132 c13_i32
  let v2139 : Index := Scalar.indexCast v2133
  let v2136 : BitVec 32 := Scalar.addi v2135 c0_i32_817
  let v2137 : BitVec 32 := v2136
  let v2140 : Index := Scalar.indexCast v2137
  ![0, v2139.toNat, v2140.toNat]
def k1_mult209 (v2135 : BitVec 32) : BitVec 32 :=
  let c16_i32_819 : BitVec 32 := 16#32
  let v2144 : BitVec 32 := Scalar.addi v2135 c16_i32_819
  v2144
def k1_mult210 (v2135 : BitVec 32) : BitVec 32 :=
  let c32_i32_821 : BitVec 32 := 32#32
  let v2152 : BitVec 32 := Scalar.addi v2135 c32_i32_821
  v2152
def k1_mult211 (v2135 : BitVec 32) : BitVec 32 :=
  let c48_i32_823 : BitVec 32 := 48#32
  let v2160 : BitVec 32 := Scalar.addi v2135 c48_i32_823
  v2160

def k1_chk50 (k1_t6 : Fin k1_t6_loop.trips) (v2135 : BitVec 32) : Prop :=
  (16 ∣ (k1_mult208 v2135).toNat) ∧
  (∀ (r : Fin 4), ∀ a, (k1_off79 k1_t6 v2135 (BitVec.ofNat 32 (16 * r.val))) a + S1x1x16.size a ≤ S2x50x128.size a) ∧
  (16 ∣ (k1_mult209 v2135).toNat) ∧
  (16 ∣ (k1_mult210 v2135).toNat) ∧
  (16 ∣ (k1_mult211 v2135).toNat)
instance k1_chk50.dec : ∀ (k1_t6 : Fin k1_t6_loop.trips) (v2135 : BitVec 32), Decidable (k1_chk50 k1_t6 v2135) := fun k1_t6 v2135 => decidable_of_iff' _ (Iff.of_eq (k1_chk50.eq_1 k1_t6 v2135))
theorem k1_mult208_dvd : ∀ (k1_t6 : Fin k1_t6_loop.trips) (v2135 : BitVec 32) (k1_hw50 : k1_chk50 k1_t6 v2135), 16 ∣ (k1_mult208 v2135).toNat := fun k1_t6 v2135 k1_hw50 => k1_hw50.1
theorem k1_off79_inb : ∀ (k1_t6 : Fin k1_t6_loop.trips) (v2135 : BitVec 32) (k1_hw50 : k1_chk50 k1_t6 v2135), ∀ (r : Fin 4), ∀ a, (k1_off79 k1_t6 v2135 (BitVec.ofNat 32 (16 * r.val))) a + S1x1x16.size a ≤ S2x50x128.size a := fun k1_t6 v2135 k1_hw50 r => k1_hw50.2.1 r
theorem k1_mult209_dvd : ∀ (k1_t6 : Fin k1_t6_loop.trips) (v2135 : BitVec 32) (k1_hw50 : k1_chk50 k1_t6 v2135), 16 ∣ (k1_mult209 v2135).toNat := fun k1_t6 v2135 k1_hw50 => k1_hw50.2.2.1
theorem k1_mult210_dvd : ∀ (k1_t6 : Fin k1_t6_loop.trips) (v2135 : BitVec 32) (k1_hw50 : k1_chk50 k1_t6 v2135), 16 ∣ (k1_mult210 v2135).toNat := fun k1_t6 v2135 k1_hw50 => k1_hw50.2.2.2.1
theorem k1_mult211_dvd : ∀ (k1_t6 : Fin k1_t6_loop.trips) (v2135 : BitVec 32) (k1_hw50 : k1_chk50 k1_t6 v2135), 16 ∣ (k1_mult211 v2135).toNat := fun k1_t6 v2135 k1_hw50 => k1_hw50.2.2.2.2

def k1_mult212 (v2171 : BitVec 32) : BitVec 32 :=
  let c0_i32_826 : BitVec 32 := 0#32
  let v2172 : BitVec 32 := Scalar.addi v2171 c0_i32_826
  v2172

def k1_off80 (k1_t6 : Fin k1_t6_loop.trips) (v2171 : BitVec 32) (c0_i32_826 : BitVec 32) : Fin 3 → Nat :=
  let c0_i32_827 : BitVec 32 := 0#32
  let v2174 : Index := Scalar.indexCast c0_i32_827
  let c0_i32_602 : BitVec 32 := 0#32
  let c1_i32_603 : BitVec 32 := 1#32
  let arg18 : BitVec 32 := Scf.iv c0_i32_602 c1_i32_603 k1_t6
  let c16_i32_825 : BitVec 32 := 16#32
  let v2168 : BitVec 32 := Scalar.muli arg18 c16_i32_825
  let c14_i32 : BitVec 32 := 14#32
  let v2169 : BitVec 32 := Scalar.addi v2168 c14_i32
  let v2175 : Index := Scalar.indexCast v2169
  let v2172 : BitVec 32 := Scalar.addi v2171 c0_i32_826
  let v2173 : BitVec 32 := v2172
  let v2176 : Index := Scalar.indexCast v2173
  ![0, v2175.toNat, v2176.toNat]
def k1_mult213 (v2171 : BitVec 32) : BitVec 32 :=
  let c16_i32_828 : BitVec 32 := 16#32
  let v2180 : BitVec 32 := Scalar.addi v2171 c16_i32_828
  v2180
def k1_mult214 (v2171 : BitVec 32) : BitVec 32 :=
  let c32_i32_830 : BitVec 32 := 32#32
  let v2188 : BitVec 32 := Scalar.addi v2171 c32_i32_830
  v2188
def k1_mult215 (v2171 : BitVec 32) : BitVec 32 :=
  let c48_i32_832 : BitVec 32 := 48#32
  let v2196 : BitVec 32 := Scalar.addi v2171 c48_i32_832
  v2196

def k1_chk51 (k1_t6 : Fin k1_t6_loop.trips) (v2171 : BitVec 32) : Prop :=
  (16 ∣ (k1_mult212 v2171).toNat) ∧
  (∀ (r : Fin 4), ∀ a, (k1_off80 k1_t6 v2171 (BitVec.ofNat 32 (16 * r.val))) a + S1x1x16.size a ≤ S2x50x128.size a) ∧
  (16 ∣ (k1_mult213 v2171).toNat) ∧
  (16 ∣ (k1_mult214 v2171).toNat) ∧
  (16 ∣ (k1_mult215 v2171).toNat)
instance k1_chk51.dec : ∀ (k1_t6 : Fin k1_t6_loop.trips) (v2171 : BitVec 32), Decidable (k1_chk51 k1_t6 v2171) := fun k1_t6 v2171 => decidable_of_iff' _ (Iff.of_eq (k1_chk51.eq_1 k1_t6 v2171))
theorem k1_mult212_dvd : ∀ (k1_t6 : Fin k1_t6_loop.trips) (v2171 : BitVec 32) (k1_hw51 : k1_chk51 k1_t6 v2171), 16 ∣ (k1_mult212 v2171).toNat := fun k1_t6 v2171 k1_hw51 => k1_hw51.1
theorem k1_off80_inb : ∀ (k1_t6 : Fin k1_t6_loop.trips) (v2171 : BitVec 32) (k1_hw51 : k1_chk51 k1_t6 v2171), ∀ (r : Fin 4), ∀ a, (k1_off80 k1_t6 v2171 (BitVec.ofNat 32 (16 * r.val))) a + S1x1x16.size a ≤ S2x50x128.size a := fun k1_t6 v2171 k1_hw51 r => k1_hw51.2.1 r
theorem k1_mult213_dvd : ∀ (k1_t6 : Fin k1_t6_loop.trips) (v2171 : BitVec 32) (k1_hw51 : k1_chk51 k1_t6 v2171), 16 ∣ (k1_mult213 v2171).toNat := fun k1_t6 v2171 k1_hw51 => k1_hw51.2.2.1
theorem k1_mult214_dvd : ∀ (k1_t6 : Fin k1_t6_loop.trips) (v2171 : BitVec 32) (k1_hw51 : k1_chk51 k1_t6 v2171), 16 ∣ (k1_mult214 v2171).toNat := fun k1_t6 v2171 k1_hw51 => k1_hw51.2.2.2.1
theorem k1_mult215_dvd : ∀ (k1_t6 : Fin k1_t6_loop.trips) (v2171 : BitVec 32) (k1_hw51 : k1_chk51 k1_t6 v2171), 16 ∣ (k1_mult215 v2171).toNat := fun k1_t6 v2171 k1_hw51 => k1_hw51.2.2.2.2

def k1_mult216 (v2207 : BitVec 32) : BitVec 32 :=
  let c0_i32_835 : BitVec 32 := 0#32
  let v2208 : BitVec 32 := Scalar.addi v2207 c0_i32_835
  v2208

def k1_off81 (k1_t6 : Fin k1_t6_loop.trips) (v2207 : BitVec 32) (c0_i32_835 : BitVec 32) : Fin 3 → Nat :=
  let c0_i32_836 : BitVec 32 := 0#32
  let v2210 : Index := Scalar.indexCast c0_i32_836
  let c0_i32_602 : BitVec 32 := 0#32
  let c1_i32_603 : BitVec 32 := 1#32
  let arg18 : BitVec 32 := Scf.iv c0_i32_602 c1_i32_603 k1_t6
  let c16_i32_834 : BitVec 32 := 16#32
  let v2204 : BitVec 32 := Scalar.muli arg18 c16_i32_834
  let c15_i32 : BitVec 32 := 15#32
  let v2205 : BitVec 32 := Scalar.addi v2204 c15_i32
  let v2211 : Index := Scalar.indexCast v2205
  let v2208 : BitVec 32 := Scalar.addi v2207 c0_i32_835
  let v2209 : BitVec 32 := v2208
  let v2212 : Index := Scalar.indexCast v2209
  ![0, v2211.toNat, v2212.toNat]
def k1_mult217 (v2207 : BitVec 32) : BitVec 32 :=
  let c16_i32_837 : BitVec 32 := 16#32
  let v2216 : BitVec 32 := Scalar.addi v2207 c16_i32_837
  v2216
def k1_mult218 (v2207 : BitVec 32) : BitVec 32 :=
  let c32_i32_839 : BitVec 32 := 32#32
  let v2224 : BitVec 32 := Scalar.addi v2207 c32_i32_839
  v2224
def k1_mult219 (v2207 : BitVec 32) : BitVec 32 :=
  let c48_i32_841 : BitVec 32 := 48#32
  let v2232 : BitVec 32 := Scalar.addi v2207 c48_i32_841
  v2232

def k1_chk52 (k1_t6 : Fin k1_t6_loop.trips) (v2207 : BitVec 32) : Prop :=
  (16 ∣ (k1_mult216 v2207).toNat) ∧
  (∀ (r : Fin 4), ∀ a, (k1_off81 k1_t6 v2207 (BitVec.ofNat 32 (16 * r.val))) a + S1x1x16.size a ≤ S2x50x128.size a) ∧
  (16 ∣ (k1_mult217 v2207).toNat) ∧
  (16 ∣ (k1_mult218 v2207).toNat) ∧
  (16 ∣ (k1_mult219 v2207).toNat)
instance k1_chk52.dec : ∀ (k1_t6 : Fin k1_t6_loop.trips) (v2207 : BitVec 32), Decidable (k1_chk52 k1_t6 v2207) := fun k1_t6 v2207 => decidable_of_iff' _ (Iff.of_eq (k1_chk52.eq_1 k1_t6 v2207))
theorem k1_mult216_dvd : ∀ (k1_t6 : Fin k1_t6_loop.trips) (v2207 : BitVec 32) (k1_hw52 : k1_chk52 k1_t6 v2207), 16 ∣ (k1_mult216 v2207).toNat := fun k1_t6 v2207 k1_hw52 => k1_hw52.1
theorem k1_off81_inb : ∀ (k1_t6 : Fin k1_t6_loop.trips) (v2207 : BitVec 32) (k1_hw52 : k1_chk52 k1_t6 v2207), ∀ (r : Fin 4), ∀ a, (k1_off81 k1_t6 v2207 (BitVec.ofNat 32 (16 * r.val))) a + S1x1x16.size a ≤ S2x50x128.size a := fun k1_t6 v2207 k1_hw52 r => k1_hw52.2.1 r
theorem k1_mult217_dvd : ∀ (k1_t6 : Fin k1_t6_loop.trips) (v2207 : BitVec 32) (k1_hw52 : k1_chk52 k1_t6 v2207), 16 ∣ (k1_mult217 v2207).toNat := fun k1_t6 v2207 k1_hw52 => k1_hw52.2.2.1
theorem k1_mult218_dvd : ∀ (k1_t6 : Fin k1_t6_loop.trips) (v2207 : BitVec 32) (k1_hw52 : k1_chk52 k1_t6 v2207), 16 ∣ (k1_mult218 v2207).toNat := fun k1_t6 v2207 k1_hw52 => k1_hw52.2.2.2.1
theorem k1_mult219_dvd : ∀ (k1_t6 : Fin k1_t6_loop.trips) (v2207 : BitVec 32) (k1_hw52 : k1_chk52 k1_t6 v2207), 16 ∣ (k1_mult219 v2207).toNat := fun k1_t6 v2207 k1_hw52 => k1_hw52.2.2.2.2

def k1_off82 (k1_t5 : Fin k1_t5_loop.trips) : Fin 1 → Nat :=
  let c1024_i32_601 : BitVec 32 := 1024#32
  let c0_i32_571 : BitVec 32 := 0#32
  let c1_i32_573 : BitVec 32 := 1#32
  let arg17 : BitVec 32 := Scf.iv c0_i32_571 c1_i32_573 k1_t5
  let c2_i32_583 : BitVec 32 := 2#32
  let v1428 : BitVec 32 := Scalar.muli arg17 c2_i32_583
  let c0_i32_584 : BitVec 32 := 0#32
  let v1429 : BitVec 32 := Scalar.addi v1428 c0_i32_584
  let c64_i32_600 : BitVec 32 := 64#32
  let v1446 : BitVec 32 := Scalar.muli v1429 c64_i32_600
  let v1447 : BitVec 32 := v1446
  let v1448 : BitVec 32 := Scalar.addi c1024_i32_601 v1447
  let c48_i32 : BitVec 32 := 48#32
  let v1451 : BitVec 32 := Scalar.addi v1448 c48_i32
  let v1452 : Index := Scalar.indexCast v1451
  ![v1452.toNat]
def k1_mult220 (v1456 : BitVec 32) : BitVec 32 :=
  let c0_i32_605 : BitVec 32 := 0#32
  let v1457 : BitVec 32 := Scalar.addi v1456 c0_i32_605
  v1457

def k1_off83 (v1456 : BitVec 32) (c0_i32_605 : BitVec 32) : Fin 3 → Nat :=
  let c0_i32_606 : BitVec 32 := 0#32
  let v1459 : Index := Scalar.indexCast c0_i32_606
  let c48_i32_607 : BitVec 32 := 48#32
  let v1460 : Index := Scalar.indexCast c48_i32_607
  let v1457 : BitVec 32 := Scalar.addi v1456 c0_i32_605
  let v1458 : BitVec 32 := v1457
  let v1461 : Index := Scalar.indexCast v1458
  ![0, 48, v1461.toNat]
def k1_mult221 (v1456 : BitVec 32) : BitVec 32 :=
  let c16_i32_608 : BitVec 32 := 16#32
  let v1465 : BitVec 32 := Scalar.addi v1456 c16_i32_608
  v1465
def k1_mult222 (v1456 : BitVec 32) : BitVec 32 :=
  let c32_i32 : BitVec 32 := 32#32
  let v1473 : BitVec 32 := Scalar.addi v1456 c32_i32
  v1473
def k1_mult223 (v1456 : BitVec 32) : BitVec 32 :=
  let c48_i32_613 : BitVec 32 := 48#32
  let v1481 : BitVec 32 := Scalar.addi v1456 c48_i32_613
  v1481

def k1_chk53 (v1456 : BitVec 32) : Prop :=
  (16 ∣ (k1_mult220 v1456).toNat) ∧
  (∀ (r : Fin 4), ∀ a, (k1_off83 v1456 (BitVec.ofNat 32 (16 * r.val))) a + S1x1x16.size a ≤ S2x50x128.size a) ∧
  (16 ∣ (k1_mult221 v1456).toNat) ∧
  (16 ∣ (k1_mult222 v1456).toNat) ∧
  (16 ∣ (k1_mult223 v1456).toNat)
instance k1_chk53.dec : ∀ (v1456 : BitVec 32), Decidable (k1_chk53 v1456) := fun v1456 => decidable_of_iff' _ (Iff.of_eq (k1_chk53.eq_1 v1456))
theorem k1_mult220_dvd : ∀ (v1456 : BitVec 32) (k1_hw53 : k1_chk53 v1456), 16 ∣ (k1_mult220 v1456).toNat := fun v1456 k1_hw53 => k1_hw53.1
theorem k1_off83_inb : ∀ (v1456 : BitVec 32) (k1_hw53 : k1_chk53 v1456), ∀ (r : Fin 4), ∀ a, (k1_off83 v1456 (BitVec.ofNat 32 (16 * r.val))) a + S1x1x16.size a ≤ S2x50x128.size a := fun v1456 k1_hw53 r => k1_hw53.2.1 r
theorem k1_mult221_dvd : ∀ (v1456 : BitVec 32) (k1_hw53 : k1_chk53 v1456), 16 ∣ (k1_mult221 v1456).toNat := fun v1456 k1_hw53 => k1_hw53.2.2.1
theorem k1_mult222_dvd : ∀ (v1456 : BitVec 32) (k1_hw53 : k1_chk53 v1456), 16 ∣ (k1_mult222 v1456).toNat := fun v1456 k1_hw53 => k1_hw53.2.2.2.1
theorem k1_mult223_dvd : ∀ (v1456 : BitVec 32) (k1_hw53 : k1_chk53 v1456), 16 ∣ (k1_mult223 v1456).toNat := fun v1456 k1_hw53 => k1_hw53.2.2.2.2

def k1_mult224 (v1490 : BitVec 32) : BitVec 32 :=
  let c0_i32_616 : BitVec 32 := 0#32
  let v1491 : BitVec 32 := Scalar.addi v1490 c0_i32_616
  v1491

def k1_off84 (v1490 : BitVec 32) (c0_i32_616 : BitVec 32) : Fin 3 → Nat :=
  let c0_i32_617 : BitVec 32 := 0#32
  let v1493 : Index := Scalar.indexCast c0_i32_617
  let c49_i32 : BitVec 32 := 49#32
  let v1494 : Index := Scalar.indexCast c49_i32
  let v1491 : BitVec 32 := Scalar.addi v1490 c0_i32_616
  let v1492 : BitVec 32 := v1491
  let v1495 : Index := Scalar.indexCast v1492
  ![0, 49, v1495.toNat]
def k1_mult225 (v1490 : BitVec 32) : BitVec 32 :=
  let c16_i32_618 : BitVec 32 := 16#32
  let v1499 : BitVec 32 := Scalar.addi v1490 c16_i32_618
  v1499
def k1_mult226 (v1490 : BitVec 32) : BitVec 32 :=
  let c32_i32_621 : BitVec 32 := 32#32
  let v1507 : BitVec 32 := Scalar.addi v1490 c32_i32_621
  v1507
def k1_mult227 (v1490 : BitVec 32) : BitVec 32 :=
  let c48_i32_624 : BitVec 32 := 48#32
  let v1515 : BitVec 32 := Scalar.addi v1490 c48_i32_624
  v1515

def k1_chk54 (v1490 : BitVec 32) : Prop :=
  (16 ∣ (k1_mult224 v1490).toNat) ∧
  (∀ (r : Fin 4), ∀ a, (k1_off84 v1490 (BitVec.ofNat 32 (16 * r.val))) a + S1x1x16.size a ≤ S2x50x128.size a) ∧
  (16 ∣ (k1_mult225 v1490).toNat) ∧
  (16 ∣ (k1_mult226 v1490).toNat) ∧
  (16 ∣ (k1_mult227 v1490).toNat)
instance k1_chk54.dec : ∀ (v1490 : BitVec 32), Decidable (k1_chk54 v1490) := fun v1490 => decidable_of_iff' _ (Iff.of_eq (k1_chk54.eq_1 v1490))
theorem k1_mult224_dvd : ∀ (v1490 : BitVec 32) (k1_hw54 : k1_chk54 v1490), 16 ∣ (k1_mult224 v1490).toNat := fun v1490 k1_hw54 => k1_hw54.1
theorem k1_off84_inb : ∀ (v1490 : BitVec 32) (k1_hw54 : k1_chk54 v1490), ∀ (r : Fin 4), ∀ a, (k1_off84 v1490 (BitVec.ofNat 32 (16 * r.val))) a + S1x1x16.size a ≤ S2x50x128.size a := fun v1490 k1_hw54 r => k1_hw54.2.1 r
theorem k1_mult225_dvd : ∀ (v1490 : BitVec 32) (k1_hw54 : k1_chk54 v1490), 16 ∣ (k1_mult225 v1490).toNat := fun v1490 k1_hw54 => k1_hw54.2.2.1
theorem k1_mult226_dvd : ∀ (v1490 : BitVec 32) (k1_hw54 : k1_chk54 v1490), 16 ∣ (k1_mult226 v1490).toNat := fun v1490 k1_hw54 => k1_hw54.2.2.2.1
theorem k1_mult227_dvd : ∀ (v1490 : BitVec 32) (k1_hw54 : k1_chk54 v1490), 16 ∣ (k1_mult227 v1490).toNat := fun v1490 k1_hw54 => k1_hw54.2.2.2.2

def k1_off85 (k1_t5 : Fin k1_t5_loop.trips) : Fin 3 → Nat :=
  let c1_i32_627 : BitVec 32 := 1#32
  let v1523 : Index := Scalar.indexCast c1_i32_627
  let c0_i32_571 : BitVec 32 := 0#32
  let c1_i32_573 : BitVec 32 := 1#32
  let arg17 : BitVec 32 := Scf.iv c0_i32_571 c1_i32_573 k1_t5
  let c2_i32_583 : BitVec 32 := 2#32
  let v1428 : BitVec 32 := Scalar.muli arg17 c2_i32_583
  let c0_i32_584 : BitVec 32 := 0#32
  let v1429 : BitVec 32 := Scalar.addi v1428 c0_i32_584
  let v1524 : Index := Scalar.indexCast v1429
  let c0_628 : Index := 0#32
  ![1, v1524.toNat, 0]
def k1_off86 (k1_t5 : Fin k1_t5_loop.trips) : Fin 3 → Nat :=
  let c1_i32_629 : BitVec 32 := 1#32
  let v1528 : Index := Scalar.indexCast c1_i32_629
  let c0_i32_571 : BitVec 32 := 0#32
  let c1_i32_573 : BitVec 32 := 1#32
  let arg17 : BitVec 32 := Scf.iv c0_i32_571 c1_i32_573 k1_t5
  let c2_i32_583 : BitVec 32 := 2#32
  let v1428 : BitVec 32 := Scalar.muli arg17 c2_i32_583
  let c0_i32_584 : BitVec 32 := 0#32
  let v1429 : BitVec 32 := Scalar.addi v1428 c0_i32_584
  let v1529 : Index := Scalar.indexCast v1429
  let c16_630 : Index := 16#32
  ![1, v1529.toNat, 16]
def k1_off87 (k1_t5 : Fin k1_t5_loop.trips) : Fin 3 → Nat :=
  let c1_i32_631 : BitVec 32 := 1#32
  let v1533 : Index := Scalar.indexCast c1_i32_631
  let c0_i32_571 : BitVec 32 := 0#32
  let c1_i32_573 : BitVec 32 := 1#32
  let arg17 : BitVec 32 := Scf.iv c0_i32_571 c1_i32_573 k1_t5
  let c2_i32_583 : BitVec 32 := 2#32
  let v1428 : BitVec 32 := Scalar.muli arg17 c2_i32_583
  let c0_i32_584 : BitVec 32 := 0#32
  let v1429 : BitVec 32 := Scalar.addi v1428 c0_i32_584
  let v1534 : Index := Scalar.indexCast v1429
  let c32_632 : Index := 32#32
  ![1, v1534.toNat, 32]
def k1_off88 (k1_t5 : Fin k1_t5_loop.trips) : Fin 3 → Nat :=
  let c1_i32_633 : BitVec 32 := 1#32
  let v1538 : Index := Scalar.indexCast c1_i32_633
  let c0_i32_571 : BitVec 32 := 0#32
  let c1_i32_573 : BitVec 32 := 1#32
  let arg17 : BitVec 32 := Scf.iv c0_i32_571 c1_i32_573 k1_t5
  let c2_i32_583 : BitVec 32 := 2#32
  let v1428 : BitVec 32 := Scalar.muli arg17 c2_i32_583
  let c0_i32_584 : BitVec 32 := 0#32
  let v1429 : BitVec 32 := Scalar.addi v1428 c0_i32_584
  let v1539 : Index := Scalar.indexCast v1429
  let c48_634 : Index := 48#32
  ![1, v1539.toNat, 48]
def k1_mult228 (k1_t5 : Fin k1_t5_loop.trips) : BitVec 32 :=
  let c0_i32_571 : BitVec 32 := 0#32
  let c1_i32_573 : BitVec 32 := 1#32
  let arg17 : BitVec 32 := Scf.iv c0_i32_571 c1_i32_573 k1_t5
  let c2_i32_635 : BitVec 32 := 2#32
  let v1543 : BitVec 32 := Scalar.muli arg17 c2_i32_635
  let c1_i32_636 : BitVec 32 := 1#32
  let v1544 : BitVec 32 := Scalar.addi v1543 c1_i32_636
  let c64_i32_637 : BitVec 32 := 64#32
  let v1545 : BitVec 32 := Scalar.muli v1544 c64_i32_637
  v1545
def k1_off89 (k1_t5 : Fin k1_t5_loop.trips) : Fin 1 → Nat :=
  let c1024_i32_638 : BitVec 32 := 1024#32
  let c0_i32_571 : BitVec 32 := 0#32
  let c1_i32_573 : BitVec 32 := 1#32
  let arg17 : BitVec 32 := Scf.iv c0_i32_571 c1_i32_573 k1_t5
  let c2_i32_635 : BitVec 32 := 2#32
  let v1543 : BitVec 32 := Scalar.muli arg17 c2_i32_635
  let c1_i32_636 : BitVec 32 := 1#32
  let v1544 : BitVec 32 := Scalar.addi v1543 c1_i32_636
  let c64_i32_637 : BitVec 32 := 64#32
  let v1545 : BitVec 32 := Scalar.muli v1544 c64_i32_637
  let v1546 : BitVec 32 := v1545
  let v1547 : BitVec 32 := Scalar.addi c1024_i32_638 v1546
  ![v1547.toNat]
def k1_cond9 (k1_t5 : Fin k1_t5_loop.trips) : BitVec 1 :=
  let c0_i32_571 : BitVec 32 := 0#32
  let c1_i32_573 : BitVec 32 := 1#32
  let arg17 : BitVec 32 := Scf.iv c0_i32_571 c1_i32_573 k1_t5
  let c7_i32_644 : BitVec 32 := 7#32
  let v1552 : BitVec 1 := Scalar.cmpi .slt arg17 c7_i32_644
  let v1553 : BitVec 32 := Scalar.extui v1552
  let c0_i32_645 : BitVec 32 := 0#32
  let v1554 : BitVec 1 := Scalar.cmpi .ne v1553 c0_i32_645
  v1554

def k1_mult229 (k1_t5 : Fin k1_t5_loop.trips) : BitVec 32 :=
  let c0_i32_571 : BitVec 32 := 0#32
  let c1_i32_573 : BitVec 32 := 1#32
  let arg17 : BitVec 32 := Scf.iv c0_i32_571 c1_i32_573 k1_t5
  let c2_i32_635 : BitVec 32 := 2#32
  let v1543 : BitVec 32 := Scalar.muli arg17 c2_i32_635
  let c1_i32_636 : BitVec 32 := 1#32
  let v1544 : BitVec 32 := Scalar.addi v1543 c1_i32_636
  let c1_i32_690 : BitVec 32 := 1#32
  let v1659 : BitVec 32 := Scalar.addi v1544 c1_i32_690
  let c64_i32_691 : BitVec 32 := 64#32
  let v1660 : BitVec 32 := Scalar.muli v1659 c64_i32_691
  v1660
def k1_off90 (k1_t5 : Fin k1_t5_loop.trips) : Fin 1 → Nat :=
  let c1024_i32_692 : BitVec 32 := 1024#32
  let c0_i32_571 : BitVec 32 := 0#32
  let c1_i32_573 : BitVec 32 := 1#32
  let arg17 : BitVec 32 := Scf.iv c0_i32_571 c1_i32_573 k1_t5
  let c2_i32_635 : BitVec 32 := 2#32
  let v1543 : BitVec 32 := Scalar.muli arg17 c2_i32_635
  let c1_i32_636 : BitVec 32 := 1#32
  let v1544 : BitVec 32 := Scalar.addi v1543 c1_i32_636
  let c1_i32_690 : BitVec 32 := 1#32
  let v1659 : BitVec 32 := Scalar.addi v1544 c1_i32_690
  let c64_i32_691 : BitVec 32 := 64#32
  let v1660 : BitVec 32 := Scalar.muli v1659 c64_i32_691
  let v1661 : BitVec 32 := v1660
  let v1662 : BitVec 32 := Scalar.addi c1024_i32_692 v1661
  ![v1662.toNat]
def k1_cond10 (k1_t1 : Fin k1_t1_loop.trips) (k1_t5 : Fin k1_t5_loop.trips) : BitVec 1 :=
  let c0_i32_571 : BitVec 32 := 0#32
  let c1_i32_573 : BitVec 32 := 1#32
  let arg17 : BitVec 32 := Scf.iv c0_i32_571 c1_i32_573 k1_t5
  let c7_i32_646 : BitVec 32 := 7#32
  let v1555 : BitVec 1 := Scalar.cmpi .eq arg17 c7_i32_646
  let c0_i32_522 : BitVec 32 := 0#32
  let c1_i32_523 : BitVec 32 := 1#32
  let arg16 : BitVec 32 := Scf.iv c0_i32_522 c1_i32_523 k1_t1
  let c2_i32_560 : BitVec 32 := 2#32
  let v1406 : BitVec 32 := Scalar.muli arg16 c2_i32_560
  let c1_i32_561 : BitVec 32 := 1#32
  let v1407 : BitVec 32 := Scalar.addi v1406 c1_i32_561
  let c1_i32_647 : BitVec 32 := 1#32
  let v1556 : BitVec 32 := Scalar.addi v1407 c1_i32_647
  let c8_i32_648 : BitVec 32 := 8#32
  let v1557 : BitVec 1 := Scalar.cmpi .slt v1556 c8_i32_648
  let v1558 : BitVec 1 := Scalar.andi v1555 v1557
  let v1559 : BitVec 32 := Scalar.extui v1558
  let c0_i32_649 : BitVec 32 := 0#32
  let v1560 : BitVec 1 := Scalar.cmpi .ne v1559 c0_i32_649
  v1560

def k1_mult230 : BitVec 32 :=
  let c0_i32_690 : BitVec 32 := 0#32
  c0_i32_690
def k1_off91 : Fin 1 → Nat :=
  let c0_i32_691 : BitVec 32 := 0#32
  let c0_i32_690 : BitVec 32 := 0#32
  let v1659 : BitVec 32 := c0_i32_690
  let v1660 : BitVec 32 := Scalar.addi c0_i32_691 v1659
  ![v1660.toNat]
def k1_mult231 (k1_t5 : Fin k1_t5_loop.trips) : BitVec 32 :=
  let c0_i32_571 : BitVec 32 := 0#32
  let c1_i32_573 : BitVec 32 := 1#32
  let arg17 : BitVec 32 := Scf.iv c0_i32_571 c1_i32_573 k1_t5
  let c2_i32_635 : BitVec 32 := 2#32
  let v1543 : BitVec 32 := Scalar.muli arg17 c2_i32_635
  let c1_i32_636 : BitVec 32 := 1#32
  let v1544 : BitVec 32 := Scalar.addi v1543 c1_i32_636
  let c64_i32_651 : BitVec 32 := 64#32
  let v1562 : BitVec 32 := Scalar.muli v1544 c64_i32_651
  v1562
@[reducible] def k1_t7_loop : Scf.Loop 32 :=
  let c0_i32_653 : BitVec 32 := 0#32
  let c3_i32_654 : BitVec 32 := 3#32
  let v1565 : BitVec 32 := Scalar.addi c0_i32_653 c3_i32_654
  let c1_i32_655 : BitVec 32 := 1#32
  ⟨c0_i32_653, v1565, c1_i32_655⟩
def k1_off92 (k1_t5 : Fin k1_t5_loop.trips) (k1_t7 : Fin k1_t7_loop.trips) : Fin 1 → Nat :=
  let c1024_i32_652 : BitVec 32 := 1024#32
  let c0_i32_571 : BitVec 32 := 0#32
  let c1_i32_573 : BitVec 32 := 1#32
  let arg17 : BitVec 32 := Scf.iv c0_i32_571 c1_i32_573 k1_t5
  let c2_i32_635 : BitVec 32 := 2#32
  let v1543 : BitVec 32 := Scalar.muli arg17 c2_i32_635
  let c1_i32_636 : BitVec 32 := 1#32
  let v1544 : BitVec 32 := Scalar.addi v1543 c1_i32_636
  let c64_i32_651 : BitVec 32 := 64#32
  let v1562 : BitVec 32 := Scalar.muli v1544 c64_i32_651
  let v1563 : BitVec 32 := v1562
  let v1564 : BitVec 32 := Scalar.addi c1024_i32_652 v1563
  let c0_i32_653 : BitVec 32 := 0#32
  let c1_i32_655 : BitVec 32 := 1#32
  let arg18 : BitVec 32 := Scf.iv c0_i32_653 c1_i32_655 k1_t7
  let c16_i32_690 : BitVec 32 := 16#32
  let v1659 : BitVec 32 := Scalar.muli arg18 c16_i32_690
  let v1660 : BitVec 32 := Scalar.addi v1564 v1659
  let v1661 : Index := Scalar.indexCast v1660
  ![v1661.toNat]
def k1_mult232 (v1667 : BitVec 32) : BitVec 32 :=
  let c0_i32_693 : BitVec 32 := 0#32
  let v1668 : BitVec 32 := Scalar.addi v1667 c0_i32_693
  v1668

def k1_off93 (k1_t7 : Fin k1_t7_loop.trips) (v1667 : BitVec 32) (c0_i32_693 : BitVec 32) : Fin 3 → Nat :=
  let c1_i32_694 : BitVec 32 := 1#32
  let v1670 : Index := Scalar.indexCast c1_i32_694
  let c0_i32_653 : BitVec 32 := 0#32
  let c1_i32_655 : BitVec 32 := 1#32
  let arg18 : BitVec 32 := Scf.iv c0_i32_653 c1_i32_655 k1_t7
  let c16_i32_691 : BitVec 32 := 16#32
  let v1664 : BitVec 32 := Scalar.muli arg18 c16_i32_691
  let c0_i32_692 : BitVec 32 := 0#32
  let v1665 : BitVec 32 := Scalar.addi v1664 c0_i32_692
  let v1671 : Index := Scalar.indexCast v1665
  let v1668 : BitVec 32 := Scalar.addi v1667 c0_i32_693
  let v1669 : BitVec 32 := v1668
  let v1672 : Index := Scalar.indexCast v1669
  ![1, v1671.toNat, v1672.toNat]
def k1_mult233 (v1667 : BitVec 32) : BitVec 32 :=
  let c16_i32_695 : BitVec 32 := 16#32
  let v1676 : BitVec 32 := Scalar.addi v1667 c16_i32_695
  v1676
def k1_mult234 (v1667 : BitVec 32) : BitVec 32 :=
  let c32_i32_697 : BitVec 32 := 32#32
  let v1684 : BitVec 32 := Scalar.addi v1667 c32_i32_697
  v1684
def k1_mult235 (v1667 : BitVec 32) : BitVec 32 :=
  let c48_i32_699 : BitVec 32 := 48#32
  let v1692 : BitVec 32 := Scalar.addi v1667 c48_i32_699
  v1692

def k1_chk55 (k1_t7 : Fin k1_t7_loop.trips) (v1667 : BitVec 32) : Prop :=
  (16 ∣ (k1_mult232 v1667).toNat) ∧
  (∀ (r : Fin 4), ∀ a, (k1_off93 k1_t7 v1667 (BitVec.ofNat 32 (16 * r.val))) a + S1x1x16.size a ≤ S2x50x128.size a) ∧
  (16 ∣ (k1_mult233 v1667).toNat) ∧
  (16 ∣ (k1_mult234 v1667).toNat) ∧
  (16 ∣ (k1_mult235 v1667).toNat)
instance k1_chk55.dec : ∀ (k1_t7 : Fin k1_t7_loop.trips) (v1667 : BitVec 32), Decidable (k1_chk55 k1_t7 v1667) := fun k1_t7 v1667 => decidable_of_iff' _ (Iff.of_eq (k1_chk55.eq_1 k1_t7 v1667))
theorem k1_mult232_dvd : ∀ (k1_t7 : Fin k1_t7_loop.trips) (v1667 : BitVec 32) (k1_hw55 : k1_chk55 k1_t7 v1667), 16 ∣ (k1_mult232 v1667).toNat := fun k1_t7 v1667 k1_hw55 => k1_hw55.1
theorem k1_off93_inb : ∀ (k1_t7 : Fin k1_t7_loop.trips) (v1667 : BitVec 32) (k1_hw55 : k1_chk55 k1_t7 v1667), ∀ (r : Fin 4), ∀ a, (k1_off93 k1_t7 v1667 (BitVec.ofNat 32 (16 * r.val))) a + S1x1x16.size a ≤ S2x50x128.size a := fun k1_t7 v1667 k1_hw55 r => k1_hw55.2.1 r
theorem k1_mult233_dvd : ∀ (k1_t7 : Fin k1_t7_loop.trips) (v1667 : BitVec 32) (k1_hw55 : k1_chk55 k1_t7 v1667), 16 ∣ (k1_mult233 v1667).toNat := fun k1_t7 v1667 k1_hw55 => k1_hw55.2.2.1
theorem k1_mult234_dvd : ∀ (k1_t7 : Fin k1_t7_loop.trips) (v1667 : BitVec 32) (k1_hw55 : k1_chk55 k1_t7 v1667), 16 ∣ (k1_mult234 v1667).toNat := fun k1_t7 v1667 k1_hw55 => k1_hw55.2.2.2.1
theorem k1_mult235_dvd : ∀ (k1_t7 : Fin k1_t7_loop.trips) (v1667 : BitVec 32) (k1_hw55 : k1_chk55 k1_t7 v1667), 16 ∣ (k1_mult235 v1667).toNat := fun k1_t7 v1667 k1_hw55 => k1_hw55.2.2.2.2

def k1_mult236 (v1703 : BitVec 32) : BitVec 32 :=
  let c0_i32_703 : BitVec 32 := 0#32
  let v1704 : BitVec 32 := Scalar.addi v1703 c0_i32_703
  v1704

def k1_off94 (k1_t7 : Fin k1_t7_loop.trips) (v1703 : BitVec 32) (c0_i32_703 : BitVec 32) : Fin 3 → Nat :=
  let c1_i32_704 : BitVec 32 := 1#32
  let v1706 : Index := Scalar.indexCast c1_i32_704
  let c0_i32_653 : BitVec 32 := 0#32
  let c1_i32_655 : BitVec 32 := 1#32
  let arg18 : BitVec 32 := Scf.iv c0_i32_653 c1_i32_655 k1_t7
  let c16_i32_701 : BitVec 32 := 16#32
  let v1700 : BitVec 32 := Scalar.muli arg18 c16_i32_701
  let c1_i32_702 : BitVec 32 := 1#32
  let v1701 : BitVec 32 := Scalar.addi v1700 c1_i32_702
  let v1707 : Index := Scalar.indexCast v1701
  let v1704 : BitVec 32 := Scalar.addi v1703 c0_i32_703
  let v1705 : BitVec 32 := v1704
  let v1708 : Index := Scalar.indexCast v1705
  ![1, v1707.toNat, v1708.toNat]
def k1_mult237 (v1703 : BitVec 32) : BitVec 32 :=
  let c16_i32_705 : BitVec 32 := 16#32
  let v1712 : BitVec 32 := Scalar.addi v1703 c16_i32_705
  v1712
def k1_mult238 (v1703 : BitVec 32) : BitVec 32 :=
  let c32_i32_707 : BitVec 32 := 32#32
  let v1720 : BitVec 32 := Scalar.addi v1703 c32_i32_707
  v1720
def k1_mult239 (v1703 : BitVec 32) : BitVec 32 :=
  let c48_i32_709 : BitVec 32 := 48#32
  let v1728 : BitVec 32 := Scalar.addi v1703 c48_i32_709
  v1728

def k1_chk56 (k1_t7 : Fin k1_t7_loop.trips) (v1703 : BitVec 32) : Prop :=
  (16 ∣ (k1_mult236 v1703).toNat) ∧
  (∀ (r : Fin 4), ∀ a, (k1_off94 k1_t7 v1703 (BitVec.ofNat 32 (16 * r.val))) a + S1x1x16.size a ≤ S2x50x128.size a) ∧
  (16 ∣ (k1_mult237 v1703).toNat) ∧
  (16 ∣ (k1_mult238 v1703).toNat) ∧
  (16 ∣ (k1_mult239 v1703).toNat)
instance k1_chk56.dec : ∀ (k1_t7 : Fin k1_t7_loop.trips) (v1703 : BitVec 32), Decidable (k1_chk56 k1_t7 v1703) := fun k1_t7 v1703 => decidable_of_iff' _ (Iff.of_eq (k1_chk56.eq_1 k1_t7 v1703))
theorem k1_mult236_dvd : ∀ (k1_t7 : Fin k1_t7_loop.trips) (v1703 : BitVec 32) (k1_hw56 : k1_chk56 k1_t7 v1703), 16 ∣ (k1_mult236 v1703).toNat := fun k1_t7 v1703 k1_hw56 => k1_hw56.1
theorem k1_off94_inb : ∀ (k1_t7 : Fin k1_t7_loop.trips) (v1703 : BitVec 32) (k1_hw56 : k1_chk56 k1_t7 v1703), ∀ (r : Fin 4), ∀ a, (k1_off94 k1_t7 v1703 (BitVec.ofNat 32 (16 * r.val))) a + S1x1x16.size a ≤ S2x50x128.size a := fun k1_t7 v1703 k1_hw56 r => k1_hw56.2.1 r
theorem k1_mult237_dvd : ∀ (k1_t7 : Fin k1_t7_loop.trips) (v1703 : BitVec 32) (k1_hw56 : k1_chk56 k1_t7 v1703), 16 ∣ (k1_mult237 v1703).toNat := fun k1_t7 v1703 k1_hw56 => k1_hw56.2.2.1
theorem k1_mult238_dvd : ∀ (k1_t7 : Fin k1_t7_loop.trips) (v1703 : BitVec 32) (k1_hw56 : k1_chk56 k1_t7 v1703), 16 ∣ (k1_mult238 v1703).toNat := fun k1_t7 v1703 k1_hw56 => k1_hw56.2.2.2.1
theorem k1_mult239_dvd : ∀ (k1_t7 : Fin k1_t7_loop.trips) (v1703 : BitVec 32) (k1_hw56 : k1_chk56 k1_t7 v1703), 16 ∣ (k1_mult239 v1703).toNat := fun k1_t7 v1703 k1_hw56 => k1_hw56.2.2.2.2

def k1_mult240 (v1739 : BitVec 32) : BitVec 32 :=
  let c0_i32_713 : BitVec 32 := 0#32
  let v1740 : BitVec 32 := Scalar.addi v1739 c0_i32_713
  v1740

def k1_off95 (k1_t7 : Fin k1_t7_loop.trips) (v1739 : BitVec 32) (c0_i32_713 : BitVec 32) : Fin 3 → Nat :=
  let c1_i32_714 : BitVec 32 := 1#32
  let v1742 : Index := Scalar.indexCast c1_i32_714
  let c0_i32_653 : BitVec 32 := 0#32
  let c1_i32_655 : BitVec 32 := 1#32
  let arg18 : BitVec 32 := Scf.iv c0_i32_653 c1_i32_655 k1_t7
  let c16_i32_711 : BitVec 32 := 16#32
  let v1736 : BitVec 32 := Scalar.muli arg18 c16_i32_711
  let c2_i32_712 : BitVec 32 := 2#32
  let v1737 : BitVec 32 := Scalar.addi v1736 c2_i32_712
  let v1743 : Index := Scalar.indexCast v1737
  let v1740 : BitVec 32 := Scalar.addi v1739 c0_i32_713
  let v1741 : BitVec 32 := v1740
  let v1744 : Index := Scalar.indexCast v1741
  ![1, v1743.toNat, v1744.toNat]
def k1_mult241 (v1739 : BitVec 32) : BitVec 32 :=
  let c16_i32_715 : BitVec 32 := 16#32
  let v1748 : BitVec 32 := Scalar.addi v1739 c16_i32_715
  v1748
def k1_mult242 (v1739 : BitVec 32) : BitVec 32 :=
  let c32_i32_717 : BitVec 32 := 32#32
  let v1756 : BitVec 32 := Scalar.addi v1739 c32_i32_717
  v1756
def k1_mult243 (v1739 : BitVec 32) : BitVec 32 :=
  let c48_i32_719 : BitVec 32 := 48#32
  let v1764 : BitVec 32 := Scalar.addi v1739 c48_i32_719
  v1764

def k1_chk57 (k1_t7 : Fin k1_t7_loop.trips) (v1739 : BitVec 32) : Prop :=
  (16 ∣ (k1_mult240 v1739).toNat) ∧
  (∀ (r : Fin 4), ∀ a, (k1_off95 k1_t7 v1739 (BitVec.ofNat 32 (16 * r.val))) a + S1x1x16.size a ≤ S2x50x128.size a) ∧
  (16 ∣ (k1_mult241 v1739).toNat) ∧
  (16 ∣ (k1_mult242 v1739).toNat) ∧
  (16 ∣ (k1_mult243 v1739).toNat)
instance k1_chk57.dec : ∀ (k1_t7 : Fin k1_t7_loop.trips) (v1739 : BitVec 32), Decidable (k1_chk57 k1_t7 v1739) := fun k1_t7 v1739 => decidable_of_iff' _ (Iff.of_eq (k1_chk57.eq_1 k1_t7 v1739))
theorem k1_mult240_dvd : ∀ (k1_t7 : Fin k1_t7_loop.trips) (v1739 : BitVec 32) (k1_hw57 : k1_chk57 k1_t7 v1739), 16 ∣ (k1_mult240 v1739).toNat := fun k1_t7 v1739 k1_hw57 => k1_hw57.1
theorem k1_off95_inb : ∀ (k1_t7 : Fin k1_t7_loop.trips) (v1739 : BitVec 32) (k1_hw57 : k1_chk57 k1_t7 v1739), ∀ (r : Fin 4), ∀ a, (k1_off95 k1_t7 v1739 (BitVec.ofNat 32 (16 * r.val))) a + S1x1x16.size a ≤ S2x50x128.size a := fun k1_t7 v1739 k1_hw57 r => k1_hw57.2.1 r
theorem k1_mult241_dvd : ∀ (k1_t7 : Fin k1_t7_loop.trips) (v1739 : BitVec 32) (k1_hw57 : k1_chk57 k1_t7 v1739), 16 ∣ (k1_mult241 v1739).toNat := fun k1_t7 v1739 k1_hw57 => k1_hw57.2.2.1
theorem k1_mult242_dvd : ∀ (k1_t7 : Fin k1_t7_loop.trips) (v1739 : BitVec 32) (k1_hw57 : k1_chk57 k1_t7 v1739), 16 ∣ (k1_mult242 v1739).toNat := fun k1_t7 v1739 k1_hw57 => k1_hw57.2.2.2.1
theorem k1_mult243_dvd : ∀ (k1_t7 : Fin k1_t7_loop.trips) (v1739 : BitVec 32) (k1_hw57 : k1_chk57 k1_t7 v1739), 16 ∣ (k1_mult243 v1739).toNat := fun k1_t7 v1739 k1_hw57 => k1_hw57.2.2.2.2

def k1_mult244 (v1775 : BitVec 32) : BitVec 32 :=
  let c0_i32_723 : BitVec 32 := 0#32
  let v1776 : BitVec 32 := Scalar.addi v1775 c0_i32_723
  v1776

def k1_off96 (k1_t7 : Fin k1_t7_loop.trips) (v1775 : BitVec 32) (c0_i32_723 : BitVec 32) : Fin 3 → Nat :=
  let c1_i32_724 : BitVec 32 := 1#32
  let v1778 : Index := Scalar.indexCast c1_i32_724
  let c0_i32_653 : BitVec 32 := 0#32
  let c1_i32_655 : BitVec 32 := 1#32
  let arg18 : BitVec 32 := Scf.iv c0_i32_653 c1_i32_655 k1_t7
  let c16_i32_721 : BitVec 32 := 16#32
  let v1772 : BitVec 32 := Scalar.muli arg18 c16_i32_721
  let c3_i32_722 : BitVec 32 := 3#32
  let v1773 : BitVec 32 := Scalar.addi v1772 c3_i32_722
  let v1779 : Index := Scalar.indexCast v1773
  let v1776 : BitVec 32 := Scalar.addi v1775 c0_i32_723
  let v1777 : BitVec 32 := v1776
  let v1780 : Index := Scalar.indexCast v1777
  ![1, v1779.toNat, v1780.toNat]
def k1_mult245 (v1775 : BitVec 32) : BitVec 32 :=
  let c16_i32_725 : BitVec 32 := 16#32
  let v1784 : BitVec 32 := Scalar.addi v1775 c16_i32_725
  v1784
def k1_mult246 (v1775 : BitVec 32) : BitVec 32 :=
  let c32_i32_727 : BitVec 32 := 32#32
  let v1792 : BitVec 32 := Scalar.addi v1775 c32_i32_727
  v1792
def k1_mult247 (v1775 : BitVec 32) : BitVec 32 :=
  let c48_i32_729 : BitVec 32 := 48#32
  let v1800 : BitVec 32 := Scalar.addi v1775 c48_i32_729
  v1800

def k1_chk58 (k1_t7 : Fin k1_t7_loop.trips) (v1775 : BitVec 32) : Prop :=
  (16 ∣ (k1_mult244 v1775).toNat) ∧
  (∀ (r : Fin 4), ∀ a, (k1_off96 k1_t7 v1775 (BitVec.ofNat 32 (16 * r.val))) a + S1x1x16.size a ≤ S2x50x128.size a) ∧
  (16 ∣ (k1_mult245 v1775).toNat) ∧
  (16 ∣ (k1_mult246 v1775).toNat) ∧
  (16 ∣ (k1_mult247 v1775).toNat)
instance k1_chk58.dec : ∀ (k1_t7 : Fin k1_t7_loop.trips) (v1775 : BitVec 32), Decidable (k1_chk58 k1_t7 v1775) := fun k1_t7 v1775 => decidable_of_iff' _ (Iff.of_eq (k1_chk58.eq_1 k1_t7 v1775))
theorem k1_mult244_dvd : ∀ (k1_t7 : Fin k1_t7_loop.trips) (v1775 : BitVec 32) (k1_hw58 : k1_chk58 k1_t7 v1775), 16 ∣ (k1_mult244 v1775).toNat := fun k1_t7 v1775 k1_hw58 => k1_hw58.1
theorem k1_off96_inb : ∀ (k1_t7 : Fin k1_t7_loop.trips) (v1775 : BitVec 32) (k1_hw58 : k1_chk58 k1_t7 v1775), ∀ (r : Fin 4), ∀ a, (k1_off96 k1_t7 v1775 (BitVec.ofNat 32 (16 * r.val))) a + S1x1x16.size a ≤ S2x50x128.size a := fun k1_t7 v1775 k1_hw58 r => k1_hw58.2.1 r
theorem k1_mult245_dvd : ∀ (k1_t7 : Fin k1_t7_loop.trips) (v1775 : BitVec 32) (k1_hw58 : k1_chk58 k1_t7 v1775), 16 ∣ (k1_mult245 v1775).toNat := fun k1_t7 v1775 k1_hw58 => k1_hw58.2.2.1
theorem k1_mult246_dvd : ∀ (k1_t7 : Fin k1_t7_loop.trips) (v1775 : BitVec 32) (k1_hw58 : k1_chk58 k1_t7 v1775), 16 ∣ (k1_mult246 v1775).toNat := fun k1_t7 v1775 k1_hw58 => k1_hw58.2.2.2.1
theorem k1_mult247_dvd : ∀ (k1_t7 : Fin k1_t7_loop.trips) (v1775 : BitVec 32) (k1_hw58 : k1_chk58 k1_t7 v1775), 16 ∣ (k1_mult247 v1775).toNat := fun k1_t7 v1775 k1_hw58 => k1_hw58.2.2.2.2

def k1_mult248 (v1811 : BitVec 32) : BitVec 32 :=
  let c0_i32_733 : BitVec 32 := 0#32
  let v1812 : BitVec 32 := Scalar.addi v1811 c0_i32_733
  v1812

def k1_off97 (k1_t7 : Fin k1_t7_loop.trips) (v1811 : BitVec 32) (c0_i32_733 : BitVec 32) : Fin 3 → Nat :=
  let c1_i32_734 : BitVec 32 := 1#32
  let v1814 : Index := Scalar.indexCast c1_i32_734
  let c0_i32_653 : BitVec 32 := 0#32
  let c1_i32_655 : BitVec 32 := 1#32
  let arg18 : BitVec 32 := Scf.iv c0_i32_653 c1_i32_655 k1_t7
  let c16_i32_731 : BitVec 32 := 16#32
  let v1808 : BitVec 32 := Scalar.muli arg18 c16_i32_731
  let c4_i32_732 : BitVec 32 := 4#32
  let v1809 : BitVec 32 := Scalar.addi v1808 c4_i32_732
  let v1815 : Index := Scalar.indexCast v1809
  let v1812 : BitVec 32 := Scalar.addi v1811 c0_i32_733
  let v1813 : BitVec 32 := v1812
  let v1816 : Index := Scalar.indexCast v1813
  ![1, v1815.toNat, v1816.toNat]
def k1_mult249 (v1811 : BitVec 32) : BitVec 32 :=
  let c16_i32_735 : BitVec 32 := 16#32
  let v1820 : BitVec 32 := Scalar.addi v1811 c16_i32_735
  v1820
def k1_mult250 (v1811 : BitVec 32) : BitVec 32 :=
  let c32_i32_737 : BitVec 32 := 32#32
  let v1828 : BitVec 32 := Scalar.addi v1811 c32_i32_737
  v1828
def k1_mult251 (v1811 : BitVec 32) : BitVec 32 :=
  let c48_i32_739 : BitVec 32 := 48#32
  let v1836 : BitVec 32 := Scalar.addi v1811 c48_i32_739
  v1836

def k1_chk59 (k1_t7 : Fin k1_t7_loop.trips) (v1811 : BitVec 32) : Prop :=
  (16 ∣ (k1_mult248 v1811).toNat) ∧
  (∀ (r : Fin 4), ∀ a, (k1_off97 k1_t7 v1811 (BitVec.ofNat 32 (16 * r.val))) a + S1x1x16.size a ≤ S2x50x128.size a) ∧
  (16 ∣ (k1_mult249 v1811).toNat) ∧
  (16 ∣ (k1_mult250 v1811).toNat) ∧
  (16 ∣ (k1_mult251 v1811).toNat)
instance k1_chk59.dec : ∀ (k1_t7 : Fin k1_t7_loop.trips) (v1811 : BitVec 32), Decidable (k1_chk59 k1_t7 v1811) := fun k1_t7 v1811 => decidable_of_iff' _ (Iff.of_eq (k1_chk59.eq_1 k1_t7 v1811))
theorem k1_mult248_dvd : ∀ (k1_t7 : Fin k1_t7_loop.trips) (v1811 : BitVec 32) (k1_hw59 : k1_chk59 k1_t7 v1811), 16 ∣ (k1_mult248 v1811).toNat := fun k1_t7 v1811 k1_hw59 => k1_hw59.1
theorem k1_off97_inb : ∀ (k1_t7 : Fin k1_t7_loop.trips) (v1811 : BitVec 32) (k1_hw59 : k1_chk59 k1_t7 v1811), ∀ (r : Fin 4), ∀ a, (k1_off97 k1_t7 v1811 (BitVec.ofNat 32 (16 * r.val))) a + S1x1x16.size a ≤ S2x50x128.size a := fun k1_t7 v1811 k1_hw59 r => k1_hw59.2.1 r
theorem k1_mult249_dvd : ∀ (k1_t7 : Fin k1_t7_loop.trips) (v1811 : BitVec 32) (k1_hw59 : k1_chk59 k1_t7 v1811), 16 ∣ (k1_mult249 v1811).toNat := fun k1_t7 v1811 k1_hw59 => k1_hw59.2.2.1
theorem k1_mult250_dvd : ∀ (k1_t7 : Fin k1_t7_loop.trips) (v1811 : BitVec 32) (k1_hw59 : k1_chk59 k1_t7 v1811), 16 ∣ (k1_mult250 v1811).toNat := fun k1_t7 v1811 k1_hw59 => k1_hw59.2.2.2.1
theorem k1_mult251_dvd : ∀ (k1_t7 : Fin k1_t7_loop.trips) (v1811 : BitVec 32) (k1_hw59 : k1_chk59 k1_t7 v1811), 16 ∣ (k1_mult251 v1811).toNat := fun k1_t7 v1811 k1_hw59 => k1_hw59.2.2.2.2

def k1_mult252 (v1847 : BitVec 32) : BitVec 32 :=
  let c0_i32_742 : BitVec 32 := 0#32
  let v1848 : BitVec 32 := Scalar.addi v1847 c0_i32_742
  v1848

def k1_off98 (k1_t7 : Fin k1_t7_loop.trips) (v1847 : BitVec 32) (c0_i32_742 : BitVec 32) : Fin 3 → Nat :=
  let c1_i32_743 : BitVec 32 := 1#32
  let v1850 : Index := Scalar.indexCast c1_i32_743
  let c0_i32_653 : BitVec 32 := 0#32
  let c1_i32_655 : BitVec 32 := 1#32
  let arg18 : BitVec 32 := Scf.iv c0_i32_653 c1_i32_655 k1_t7
  let c16_i32_741 : BitVec 32 := 16#32
  let v1844 : BitVec 32 := Scalar.muli arg18 c16_i32_741
  let c5_i32 : BitVec 32 := 5#32
  let v1845 : BitVec 32 := Scalar.addi v1844 c5_i32
  let v1851 : Index := Scalar.indexCast v1845
  let v1848 : BitVec 32 := Scalar.addi v1847 c0_i32_742
  let v1849 : BitVec 32 := v1848
  let v1852 : Index := Scalar.indexCast v1849
  ![1, v1851.toNat, v1852.toNat]
def k1_mult253 (v1847 : BitVec 32) : BitVec 32 :=
  let c16_i32_744 : BitVec 32 := 16#32
  let v1856 : BitVec 32 := Scalar.addi v1847 c16_i32_744
  v1856
def k1_mult254 (v1847 : BitVec 32) : BitVec 32 :=
  let c32_i32_746 : BitVec 32 := 32#32
  let v1864 : BitVec 32 := Scalar.addi v1847 c32_i32_746
  v1864
def k1_mult255 (v1847 : BitVec 32) : BitVec 32 :=
  let c48_i32_748 : BitVec 32 := 48#32
  let v1872 : BitVec 32 := Scalar.addi v1847 c48_i32_748
  v1872

def k1_chk60 (k1_t7 : Fin k1_t7_loop.trips) (v1847 : BitVec 32) : Prop :=
  (16 ∣ (k1_mult252 v1847).toNat) ∧
  (∀ (r : Fin 4), ∀ a, (k1_off98 k1_t7 v1847 (BitVec.ofNat 32 (16 * r.val))) a + S1x1x16.size a ≤ S2x50x128.size a) ∧
  (16 ∣ (k1_mult253 v1847).toNat) ∧
  (16 ∣ (k1_mult254 v1847).toNat) ∧
  (16 ∣ (k1_mult255 v1847).toNat)
instance k1_chk60.dec : ∀ (k1_t7 : Fin k1_t7_loop.trips) (v1847 : BitVec 32), Decidable (k1_chk60 k1_t7 v1847) := fun k1_t7 v1847 => decidable_of_iff' _ (Iff.of_eq (k1_chk60.eq_1 k1_t7 v1847))
theorem k1_mult252_dvd : ∀ (k1_t7 : Fin k1_t7_loop.trips) (v1847 : BitVec 32) (k1_hw60 : k1_chk60 k1_t7 v1847), 16 ∣ (k1_mult252 v1847).toNat := fun k1_t7 v1847 k1_hw60 => k1_hw60.1
theorem k1_off98_inb : ∀ (k1_t7 : Fin k1_t7_loop.trips) (v1847 : BitVec 32) (k1_hw60 : k1_chk60 k1_t7 v1847), ∀ (r : Fin 4), ∀ a, (k1_off98 k1_t7 v1847 (BitVec.ofNat 32 (16 * r.val))) a + S1x1x16.size a ≤ S2x50x128.size a := fun k1_t7 v1847 k1_hw60 r => k1_hw60.2.1 r
theorem k1_mult253_dvd : ∀ (k1_t7 : Fin k1_t7_loop.trips) (v1847 : BitVec 32) (k1_hw60 : k1_chk60 k1_t7 v1847), 16 ∣ (k1_mult253 v1847).toNat := fun k1_t7 v1847 k1_hw60 => k1_hw60.2.2.1
theorem k1_mult254_dvd : ∀ (k1_t7 : Fin k1_t7_loop.trips) (v1847 : BitVec 32) (k1_hw60 : k1_chk60 k1_t7 v1847), 16 ∣ (k1_mult254 v1847).toNat := fun k1_t7 v1847 k1_hw60 => k1_hw60.2.2.2.1
theorem k1_mult255_dvd : ∀ (k1_t7 : Fin k1_t7_loop.trips) (v1847 : BitVec 32) (k1_hw60 : k1_chk60 k1_t7 v1847), 16 ∣ (k1_mult255 v1847).toNat := fun k1_t7 v1847 k1_hw60 => k1_hw60.2.2.2.2

def k1_mult256 (v1883 : BitVec 32) : BitVec 32 :=
  let c0_i32_752 : BitVec 32 := 0#32
  let v1884 : BitVec 32 := Scalar.addi v1883 c0_i32_752
  v1884

def k1_off99 (k1_t7 : Fin k1_t7_loop.trips) (v1883 : BitVec 32) (c0_i32_752 : BitVec 32) : Fin 3 → Nat :=
  let c1_i32_753 : BitVec 32 := 1#32
  let v1886 : Index := Scalar.indexCast c1_i32_753
  let c0_i32_653 : BitVec 32 := 0#32
  let c1_i32_655 : BitVec 32 := 1#32
  let arg18 : BitVec 32 := Scf.iv c0_i32_653 c1_i32_655 k1_t7
  let c16_i32_750 : BitVec 32 := 16#32
  let v1880 : BitVec 32 := Scalar.muli arg18 c16_i32_750
  let c6_i32_751 : BitVec 32 := 6#32
  let v1881 : BitVec 32 := Scalar.addi v1880 c6_i32_751
  let v1887 : Index := Scalar.indexCast v1881
  let v1884 : BitVec 32 := Scalar.addi v1883 c0_i32_752
  let v1885 : BitVec 32 := v1884
  let v1888 : Index := Scalar.indexCast v1885
  ![1, v1887.toNat, v1888.toNat]
def k1_mult257 (v1883 : BitVec 32) : BitVec 32 :=
  let c16_i32_754 : BitVec 32 := 16#32
  let v1892 : BitVec 32 := Scalar.addi v1883 c16_i32_754
  v1892
def k1_mult258 (v1883 : BitVec 32) : BitVec 32 :=
  let c32_i32_756 : BitVec 32 := 32#32
  let v1900 : BitVec 32 := Scalar.addi v1883 c32_i32_756
  v1900
def k1_mult259 (v1883 : BitVec 32) : BitVec 32 :=
  let c48_i32_758 : BitVec 32 := 48#32
  let v1908 : BitVec 32 := Scalar.addi v1883 c48_i32_758
  v1908

def k1_chk61 (k1_t7 : Fin k1_t7_loop.trips) (v1883 : BitVec 32) : Prop :=
  (16 ∣ (k1_mult256 v1883).toNat) ∧
  (∀ (r : Fin 4), ∀ a, (k1_off99 k1_t7 v1883 (BitVec.ofNat 32 (16 * r.val))) a + S1x1x16.size a ≤ S2x50x128.size a) ∧
  (16 ∣ (k1_mult257 v1883).toNat) ∧
  (16 ∣ (k1_mult258 v1883).toNat) ∧
  (16 ∣ (k1_mult259 v1883).toNat)
instance k1_chk61.dec : ∀ (k1_t7 : Fin k1_t7_loop.trips) (v1883 : BitVec 32), Decidable (k1_chk61 k1_t7 v1883) := fun k1_t7 v1883 => decidable_of_iff' _ (Iff.of_eq (k1_chk61.eq_1 k1_t7 v1883))
theorem k1_mult256_dvd : ∀ (k1_t7 : Fin k1_t7_loop.trips) (v1883 : BitVec 32) (k1_hw61 : k1_chk61 k1_t7 v1883), 16 ∣ (k1_mult256 v1883).toNat := fun k1_t7 v1883 k1_hw61 => k1_hw61.1
theorem k1_off99_inb : ∀ (k1_t7 : Fin k1_t7_loop.trips) (v1883 : BitVec 32) (k1_hw61 : k1_chk61 k1_t7 v1883), ∀ (r : Fin 4), ∀ a, (k1_off99 k1_t7 v1883 (BitVec.ofNat 32 (16 * r.val))) a + S1x1x16.size a ≤ S2x50x128.size a := fun k1_t7 v1883 k1_hw61 r => k1_hw61.2.1 r
theorem k1_mult257_dvd : ∀ (k1_t7 : Fin k1_t7_loop.trips) (v1883 : BitVec 32) (k1_hw61 : k1_chk61 k1_t7 v1883), 16 ∣ (k1_mult257 v1883).toNat := fun k1_t7 v1883 k1_hw61 => k1_hw61.2.2.1
theorem k1_mult258_dvd : ∀ (k1_t7 : Fin k1_t7_loop.trips) (v1883 : BitVec 32) (k1_hw61 : k1_chk61 k1_t7 v1883), 16 ∣ (k1_mult258 v1883).toNat := fun k1_t7 v1883 k1_hw61 => k1_hw61.2.2.2.1
theorem k1_mult259_dvd : ∀ (k1_t7 : Fin k1_t7_loop.trips) (v1883 : BitVec 32) (k1_hw61 : k1_chk61 k1_t7 v1883), 16 ∣ (k1_mult259 v1883).toNat := fun k1_t7 v1883 k1_hw61 => k1_hw61.2.2.2.2

def k1_mult260 (v1919 : BitVec 32) : BitVec 32 :=
  let c0_i32_762 : BitVec 32 := 0#32
  let v1920 : BitVec 32 := Scalar.addi v1919 c0_i32_762
  v1920

def k1_off100 (k1_t7 : Fin k1_t7_loop.trips) (v1919 : BitVec 32) (c0_i32_762 : BitVec 32) : Fin 3 → Nat :=
  let c1_i32_763 : BitVec 32 := 1#32
  let v1922 : Index := Scalar.indexCast c1_i32_763
  let c0_i32_653 : BitVec 32 := 0#32
  let c1_i32_655 : BitVec 32 := 1#32
  let arg18 : BitVec 32 := Scf.iv c0_i32_653 c1_i32_655 k1_t7
  let c16_i32_760 : BitVec 32 := 16#32
  let v1916 : BitVec 32 := Scalar.muli arg18 c16_i32_760
  let c7_i32_761 : BitVec 32 := 7#32
  let v1917 : BitVec 32 := Scalar.addi v1916 c7_i32_761
  let v1923 : Index := Scalar.indexCast v1917
  let v1920 : BitVec 32 := Scalar.addi v1919 c0_i32_762
  let v1921 : BitVec 32 := v1920
  let v1924 : Index := Scalar.indexCast v1921
  ![1, v1923.toNat, v1924.toNat]
def k1_mult261 (v1919 : BitVec 32) : BitVec 32 :=
  let c16_i32_764 : BitVec 32 := 16#32
  let v1928 : BitVec 32 := Scalar.addi v1919 c16_i32_764
  v1928
def k1_mult262 (v1919 : BitVec 32) : BitVec 32 :=
  let c32_i32_766 : BitVec 32 := 32#32
  let v1936 : BitVec 32 := Scalar.addi v1919 c32_i32_766
  v1936
def k1_mult263 (v1919 : BitVec 32) : BitVec 32 :=
  let c48_i32_768 : BitVec 32 := 48#32
  let v1944 : BitVec 32 := Scalar.addi v1919 c48_i32_768
  v1944

def k1_chk62 (k1_t7 : Fin k1_t7_loop.trips) (v1919 : BitVec 32) : Prop :=
  (16 ∣ (k1_mult260 v1919).toNat) ∧
  (∀ (r : Fin 4), ∀ a, (k1_off100 k1_t7 v1919 (BitVec.ofNat 32 (16 * r.val))) a + S1x1x16.size a ≤ S2x50x128.size a) ∧
  (16 ∣ (k1_mult261 v1919).toNat) ∧
  (16 ∣ (k1_mult262 v1919).toNat) ∧
  (16 ∣ (k1_mult263 v1919).toNat)
instance k1_chk62.dec : ∀ (k1_t7 : Fin k1_t7_loop.trips) (v1919 : BitVec 32), Decidable (k1_chk62 k1_t7 v1919) := fun k1_t7 v1919 => decidable_of_iff' _ (Iff.of_eq (k1_chk62.eq_1 k1_t7 v1919))
theorem k1_mult260_dvd : ∀ (k1_t7 : Fin k1_t7_loop.trips) (v1919 : BitVec 32) (k1_hw62 : k1_chk62 k1_t7 v1919), 16 ∣ (k1_mult260 v1919).toNat := fun k1_t7 v1919 k1_hw62 => k1_hw62.1
theorem k1_off100_inb : ∀ (k1_t7 : Fin k1_t7_loop.trips) (v1919 : BitVec 32) (k1_hw62 : k1_chk62 k1_t7 v1919), ∀ (r : Fin 4), ∀ a, (k1_off100 k1_t7 v1919 (BitVec.ofNat 32 (16 * r.val))) a + S1x1x16.size a ≤ S2x50x128.size a := fun k1_t7 v1919 k1_hw62 r => k1_hw62.2.1 r
theorem k1_mult261_dvd : ∀ (k1_t7 : Fin k1_t7_loop.trips) (v1919 : BitVec 32) (k1_hw62 : k1_chk62 k1_t7 v1919), 16 ∣ (k1_mult261 v1919).toNat := fun k1_t7 v1919 k1_hw62 => k1_hw62.2.2.1
theorem k1_mult262_dvd : ∀ (k1_t7 : Fin k1_t7_loop.trips) (v1919 : BitVec 32) (k1_hw62 : k1_chk62 k1_t7 v1919), 16 ∣ (k1_mult262 v1919).toNat := fun k1_t7 v1919 k1_hw62 => k1_hw62.2.2.2.1
theorem k1_mult263_dvd : ∀ (k1_t7 : Fin k1_t7_loop.trips) (v1919 : BitVec 32) (k1_hw62 : k1_chk62 k1_t7 v1919), 16 ∣ (k1_mult263 v1919).toNat := fun k1_t7 v1919 k1_hw62 => k1_hw62.2.2.2.2

def k1_mult264 (v1955 : BitVec 32) : BitVec 32 :=
  let c0_i32_772 : BitVec 32 := 0#32
  let v1956 : BitVec 32 := Scalar.addi v1955 c0_i32_772
  v1956

def k1_off101 (k1_t7 : Fin k1_t7_loop.trips) (v1955 : BitVec 32) (c0_i32_772 : BitVec 32) : Fin 3 → Nat :=
  let c1_i32_773 : BitVec 32 := 1#32
  let v1958 : Index := Scalar.indexCast c1_i32_773
  let c0_i32_653 : BitVec 32 := 0#32
  let c1_i32_655 : BitVec 32 := 1#32
  let arg18 : BitVec 32 := Scf.iv c0_i32_653 c1_i32_655 k1_t7
  let c16_i32_770 : BitVec 32 := 16#32
  let v1952 : BitVec 32 := Scalar.muli arg18 c16_i32_770
  let c8_i32_771 : BitVec 32 := 8#32
  let v1953 : BitVec 32 := Scalar.addi v1952 c8_i32_771
  let v1959 : Index := Scalar.indexCast v1953
  let v1956 : BitVec 32 := Scalar.addi v1955 c0_i32_772
  let v1957 : BitVec 32 := v1956
  let v1960 : Index := Scalar.indexCast v1957
  ![1, v1959.toNat, v1960.toNat]
def k1_mult265 (v1955 : BitVec 32) : BitVec 32 :=
  let c16_i32_774 : BitVec 32 := 16#32
  let v1964 : BitVec 32 := Scalar.addi v1955 c16_i32_774
  v1964
def k1_mult266 (v1955 : BitVec 32) : BitVec 32 :=
  let c32_i32_776 : BitVec 32 := 32#32
  let v1972 : BitVec 32 := Scalar.addi v1955 c32_i32_776
  v1972
def k1_mult267 (v1955 : BitVec 32) : BitVec 32 :=
  let c48_i32_778 : BitVec 32 := 48#32
  let v1980 : BitVec 32 := Scalar.addi v1955 c48_i32_778
  v1980

def k1_chk63 (k1_t7 : Fin k1_t7_loop.trips) (v1955 : BitVec 32) : Prop :=
  (16 ∣ (k1_mult264 v1955).toNat) ∧
  (∀ (r : Fin 4), ∀ a, (k1_off101 k1_t7 v1955 (BitVec.ofNat 32 (16 * r.val))) a + S1x1x16.size a ≤ S2x50x128.size a) ∧
  (16 ∣ (k1_mult265 v1955).toNat) ∧
  (16 ∣ (k1_mult266 v1955).toNat) ∧
  (16 ∣ (k1_mult267 v1955).toNat)
instance k1_chk63.dec : ∀ (k1_t7 : Fin k1_t7_loop.trips) (v1955 : BitVec 32), Decidable (k1_chk63 k1_t7 v1955) := fun k1_t7 v1955 => decidable_of_iff' _ (Iff.of_eq (k1_chk63.eq_1 k1_t7 v1955))
theorem k1_mult264_dvd : ∀ (k1_t7 : Fin k1_t7_loop.trips) (v1955 : BitVec 32) (k1_hw63 : k1_chk63 k1_t7 v1955), 16 ∣ (k1_mult264 v1955).toNat := fun k1_t7 v1955 k1_hw63 => k1_hw63.1
theorem k1_off101_inb : ∀ (k1_t7 : Fin k1_t7_loop.trips) (v1955 : BitVec 32) (k1_hw63 : k1_chk63 k1_t7 v1955), ∀ (r : Fin 4), ∀ a, (k1_off101 k1_t7 v1955 (BitVec.ofNat 32 (16 * r.val))) a + S1x1x16.size a ≤ S2x50x128.size a := fun k1_t7 v1955 k1_hw63 r => k1_hw63.2.1 r
theorem k1_mult265_dvd : ∀ (k1_t7 : Fin k1_t7_loop.trips) (v1955 : BitVec 32) (k1_hw63 : k1_chk63 k1_t7 v1955), 16 ∣ (k1_mult265 v1955).toNat := fun k1_t7 v1955 k1_hw63 => k1_hw63.2.2.1
theorem k1_mult266_dvd : ∀ (k1_t7 : Fin k1_t7_loop.trips) (v1955 : BitVec 32) (k1_hw63 : k1_chk63 k1_t7 v1955), 16 ∣ (k1_mult266 v1955).toNat := fun k1_t7 v1955 k1_hw63 => k1_hw63.2.2.2.1
theorem k1_mult267_dvd : ∀ (k1_t7 : Fin k1_t7_loop.trips) (v1955 : BitVec 32) (k1_hw63 : k1_chk63 k1_t7 v1955), 16 ∣ (k1_mult267 v1955).toNat := fun k1_t7 v1955 k1_hw63 => k1_hw63.2.2.2.2

def k1_mult268 (v1991 : BitVec 32) : BitVec 32 :=
  let c0_i32_781 : BitVec 32 := 0#32
  let v1992 : BitVec 32 := Scalar.addi v1991 c0_i32_781
  v1992

def k1_off102 (k1_t7 : Fin k1_t7_loop.trips) (v1991 : BitVec 32) (c0_i32_781 : BitVec 32) : Fin 3 → Nat :=
  let c1_i32_782 : BitVec 32 := 1#32
  let v1994 : Index := Scalar.indexCast c1_i32_782
  let c0_i32_653 : BitVec 32 := 0#32
  let c1_i32_655 : BitVec 32 := 1#32
  let arg18 : BitVec 32 := Scf.iv c0_i32_653 c1_i32_655 k1_t7
  let c16_i32_780 : BitVec 32 := 16#32
  let v1988 : BitVec 32 := Scalar.muli arg18 c16_i32_780
  let c9_i32 : BitVec 32 := 9#32
  let v1989 : BitVec 32 := Scalar.addi v1988 c9_i32
  let v1995 : Index := Scalar.indexCast v1989
  let v1992 : BitVec 32 := Scalar.addi v1991 c0_i32_781
  let v1993 : BitVec 32 := v1992
  let v1996 : Index := Scalar.indexCast v1993
  ![1, v1995.toNat, v1996.toNat]
def k1_mult269 (v1991 : BitVec 32) : BitVec 32 :=
  let c16_i32_783 : BitVec 32 := 16#32
  let v2000 : BitVec 32 := Scalar.addi v1991 c16_i32_783
  v2000
def k1_mult270 (v1991 : BitVec 32) : BitVec 32 :=
  let c32_i32_785 : BitVec 32 := 32#32
  let v2008 : BitVec 32 := Scalar.addi v1991 c32_i32_785
  v2008
def k1_mult271 (v1991 : BitVec 32) : BitVec 32 :=
  let c48_i32_787 : BitVec 32 := 48#32
  let v2016 : BitVec 32 := Scalar.addi v1991 c48_i32_787
  v2016

def k1_chk64 (k1_t7 : Fin k1_t7_loop.trips) (v1991 : BitVec 32) : Prop :=
  (16 ∣ (k1_mult268 v1991).toNat) ∧
  (∀ (r : Fin 4), ∀ a, (k1_off102 k1_t7 v1991 (BitVec.ofNat 32 (16 * r.val))) a + S1x1x16.size a ≤ S2x50x128.size a) ∧
  (16 ∣ (k1_mult269 v1991).toNat) ∧
  (16 ∣ (k1_mult270 v1991).toNat) ∧
  (16 ∣ (k1_mult271 v1991).toNat)
instance k1_chk64.dec : ∀ (k1_t7 : Fin k1_t7_loop.trips) (v1991 : BitVec 32), Decidable (k1_chk64 k1_t7 v1991) := fun k1_t7 v1991 => decidable_of_iff' _ (Iff.of_eq (k1_chk64.eq_1 k1_t7 v1991))
theorem k1_mult268_dvd : ∀ (k1_t7 : Fin k1_t7_loop.trips) (v1991 : BitVec 32) (k1_hw64 : k1_chk64 k1_t7 v1991), 16 ∣ (k1_mult268 v1991).toNat := fun k1_t7 v1991 k1_hw64 => k1_hw64.1
theorem k1_off102_inb : ∀ (k1_t7 : Fin k1_t7_loop.trips) (v1991 : BitVec 32) (k1_hw64 : k1_chk64 k1_t7 v1991), ∀ (r : Fin 4), ∀ a, (k1_off102 k1_t7 v1991 (BitVec.ofNat 32 (16 * r.val))) a + S1x1x16.size a ≤ S2x50x128.size a := fun k1_t7 v1991 k1_hw64 r => k1_hw64.2.1 r
theorem k1_mult269_dvd : ∀ (k1_t7 : Fin k1_t7_loop.trips) (v1991 : BitVec 32) (k1_hw64 : k1_chk64 k1_t7 v1991), 16 ∣ (k1_mult269 v1991).toNat := fun k1_t7 v1991 k1_hw64 => k1_hw64.2.2.1
theorem k1_mult270_dvd : ∀ (k1_t7 : Fin k1_t7_loop.trips) (v1991 : BitVec 32) (k1_hw64 : k1_chk64 k1_t7 v1991), 16 ∣ (k1_mult270 v1991).toNat := fun k1_t7 v1991 k1_hw64 => k1_hw64.2.2.2.1
theorem k1_mult271_dvd : ∀ (k1_t7 : Fin k1_t7_loop.trips) (v1991 : BitVec 32) (k1_hw64 : k1_chk64 k1_t7 v1991), 16 ∣ (k1_mult271 v1991).toNat := fun k1_t7 v1991 k1_hw64 => k1_hw64.2.2.2.2

def k1_mult272 (v2027 : BitVec 32) : BitVec 32 :=
  let c0_i32_790 : BitVec 32 := 0#32
  let v2028 : BitVec 32 := Scalar.addi v2027 c0_i32_790
  v2028

def k1_off103 (k1_t7 : Fin k1_t7_loop.trips) (v2027 : BitVec 32) (c0_i32_790 : BitVec 32) : Fin 3 → Nat :=
  let c1_i32_791 : BitVec 32 := 1#32
  let v2030 : Index := Scalar.indexCast c1_i32_791
  let c0_i32_653 : BitVec 32 := 0#32
  let c1_i32_655 : BitVec 32 := 1#32
  let arg18 : BitVec 32 := Scf.iv c0_i32_653 c1_i32_655 k1_t7
  let c16_i32_789 : BitVec 32 := 16#32
  let v2024 : BitVec 32 := Scalar.muli arg18 c16_i32_789
  let c10_i32 : BitVec 32 := 10#32
  let v2025 : BitVec 32 := Scalar.addi v2024 c10_i32
  let v2031 : Index := Scalar.indexCast v2025
  let v2028 : BitVec 32 := Scalar.addi v2027 c0_i32_790
  let v2029 : BitVec 32 := v2028
  let v2032 : Index := Scalar.indexCast v2029
  ![1, v2031.toNat, v2032.toNat]
def k1_mult273 (v2027 : BitVec 32) : BitVec 32 :=
  let c16_i32_792 : BitVec 32 := 16#32
  let v2036 : BitVec 32 := Scalar.addi v2027 c16_i32_792
  v2036
def k1_mult274 (v2027 : BitVec 32) : BitVec 32 :=
  let c32_i32_794 : BitVec 32 := 32#32
  let v2044 : BitVec 32 := Scalar.addi v2027 c32_i32_794
  v2044
def k1_mult275 (v2027 : BitVec 32) : BitVec 32 :=
  let c48_i32_796 : BitVec 32 := 48#32
  let v2052 : BitVec 32 := Scalar.addi v2027 c48_i32_796
  v2052

def k1_chk65 (k1_t7 : Fin k1_t7_loop.trips) (v2027 : BitVec 32) : Prop :=
  (16 ∣ (k1_mult272 v2027).toNat) ∧
  (∀ (r : Fin 4), ∀ a, (k1_off103 k1_t7 v2027 (BitVec.ofNat 32 (16 * r.val))) a + S1x1x16.size a ≤ S2x50x128.size a) ∧
  (16 ∣ (k1_mult273 v2027).toNat) ∧
  (16 ∣ (k1_mult274 v2027).toNat) ∧
  (16 ∣ (k1_mult275 v2027).toNat)
instance k1_chk65.dec : ∀ (k1_t7 : Fin k1_t7_loop.trips) (v2027 : BitVec 32), Decidable (k1_chk65 k1_t7 v2027) := fun k1_t7 v2027 => decidable_of_iff' _ (Iff.of_eq (k1_chk65.eq_1 k1_t7 v2027))
theorem k1_mult272_dvd : ∀ (k1_t7 : Fin k1_t7_loop.trips) (v2027 : BitVec 32) (k1_hw65 : k1_chk65 k1_t7 v2027), 16 ∣ (k1_mult272 v2027).toNat := fun k1_t7 v2027 k1_hw65 => k1_hw65.1
theorem k1_off103_inb : ∀ (k1_t7 : Fin k1_t7_loop.trips) (v2027 : BitVec 32) (k1_hw65 : k1_chk65 k1_t7 v2027), ∀ (r : Fin 4), ∀ a, (k1_off103 k1_t7 v2027 (BitVec.ofNat 32 (16 * r.val))) a + S1x1x16.size a ≤ S2x50x128.size a := fun k1_t7 v2027 k1_hw65 r => k1_hw65.2.1 r
theorem k1_mult273_dvd : ∀ (k1_t7 : Fin k1_t7_loop.trips) (v2027 : BitVec 32) (k1_hw65 : k1_chk65 k1_t7 v2027), 16 ∣ (k1_mult273 v2027).toNat := fun k1_t7 v2027 k1_hw65 => k1_hw65.2.2.1
theorem k1_mult274_dvd : ∀ (k1_t7 : Fin k1_t7_loop.trips) (v2027 : BitVec 32) (k1_hw65 : k1_chk65 k1_t7 v2027), 16 ∣ (k1_mult274 v2027).toNat := fun k1_t7 v2027 k1_hw65 => k1_hw65.2.2.2.1
theorem k1_mult275_dvd : ∀ (k1_t7 : Fin k1_t7_loop.trips) (v2027 : BitVec 32) (k1_hw65 : k1_chk65 k1_t7 v2027), 16 ∣ (k1_mult275 v2027).toNat := fun k1_t7 v2027 k1_hw65 => k1_hw65.2.2.2.2

def k1_mult276 (v2063 : BitVec 32) : BitVec 32 :=
  let c0_i32_799 : BitVec 32 := 0#32
  let v2064 : BitVec 32 := Scalar.addi v2063 c0_i32_799
  v2064

def k1_off104 (k1_t7 : Fin k1_t7_loop.trips) (v2063 : BitVec 32) (c0_i32_799 : BitVec 32) : Fin 3 → Nat :=
  let c1_i32_800 : BitVec 32 := 1#32
  let v2066 : Index := Scalar.indexCast c1_i32_800
  let c0_i32_653 : BitVec 32 := 0#32
  let c1_i32_655 : BitVec 32 := 1#32
  let arg18 : BitVec 32 := Scf.iv c0_i32_653 c1_i32_655 k1_t7
  let c16_i32_798 : BitVec 32 := 16#32
  let v2060 : BitVec 32 := Scalar.muli arg18 c16_i32_798
  let c11_i32 : BitVec 32 := 11#32
  let v2061 : BitVec 32 := Scalar.addi v2060 c11_i32
  let v2067 : Index := Scalar.indexCast v2061
  let v2064 : BitVec 32 := Scalar.addi v2063 c0_i32_799
  let v2065 : BitVec 32 := v2064
  let v2068 : Index := Scalar.indexCast v2065
  ![1, v2067.toNat, v2068.toNat]
def k1_mult277 (v2063 : BitVec 32) : BitVec 32 :=
  let c16_i32_801 : BitVec 32 := 16#32
  let v2072 : BitVec 32 := Scalar.addi v2063 c16_i32_801
  v2072
def k1_mult278 (v2063 : BitVec 32) : BitVec 32 :=
  let c32_i32_803 : BitVec 32 := 32#32
  let v2080 : BitVec 32 := Scalar.addi v2063 c32_i32_803
  v2080
def k1_mult279 (v2063 : BitVec 32) : BitVec 32 :=
  let c48_i32_805 : BitVec 32 := 48#32
  let v2088 : BitVec 32 := Scalar.addi v2063 c48_i32_805
  v2088

def k1_chk66 (k1_t7 : Fin k1_t7_loop.trips) (v2063 : BitVec 32) : Prop :=
  (16 ∣ (k1_mult276 v2063).toNat) ∧
  (∀ (r : Fin 4), ∀ a, (k1_off104 k1_t7 v2063 (BitVec.ofNat 32 (16 * r.val))) a + S1x1x16.size a ≤ S2x50x128.size a) ∧
  (16 ∣ (k1_mult277 v2063).toNat) ∧
  (16 ∣ (k1_mult278 v2063).toNat) ∧
  (16 ∣ (k1_mult279 v2063).toNat)
instance k1_chk66.dec : ∀ (k1_t7 : Fin k1_t7_loop.trips) (v2063 : BitVec 32), Decidable (k1_chk66 k1_t7 v2063) := fun k1_t7 v2063 => decidable_of_iff' _ (Iff.of_eq (k1_chk66.eq_1 k1_t7 v2063))
theorem k1_mult276_dvd : ∀ (k1_t7 : Fin k1_t7_loop.trips) (v2063 : BitVec 32) (k1_hw66 : k1_chk66 k1_t7 v2063), 16 ∣ (k1_mult276 v2063).toNat := fun k1_t7 v2063 k1_hw66 => k1_hw66.1
theorem k1_off104_inb : ∀ (k1_t7 : Fin k1_t7_loop.trips) (v2063 : BitVec 32) (k1_hw66 : k1_chk66 k1_t7 v2063), ∀ (r : Fin 4), ∀ a, (k1_off104 k1_t7 v2063 (BitVec.ofNat 32 (16 * r.val))) a + S1x1x16.size a ≤ S2x50x128.size a := fun k1_t7 v2063 k1_hw66 r => k1_hw66.2.1 r
theorem k1_mult277_dvd : ∀ (k1_t7 : Fin k1_t7_loop.trips) (v2063 : BitVec 32) (k1_hw66 : k1_chk66 k1_t7 v2063), 16 ∣ (k1_mult277 v2063).toNat := fun k1_t7 v2063 k1_hw66 => k1_hw66.2.2.1
theorem k1_mult278_dvd : ∀ (k1_t7 : Fin k1_t7_loop.trips) (v2063 : BitVec 32) (k1_hw66 : k1_chk66 k1_t7 v2063), 16 ∣ (k1_mult278 v2063).toNat := fun k1_t7 v2063 k1_hw66 => k1_hw66.2.2.2.1
theorem k1_mult279_dvd : ∀ (k1_t7 : Fin k1_t7_loop.trips) (v2063 : BitVec 32) (k1_hw66 : k1_chk66 k1_t7 v2063), 16 ∣ (k1_mult279 v2063).toNat := fun k1_t7 v2063 k1_hw66 => k1_hw66.2.2.2.2

def k1_mult280 (v2099 : BitVec 32) : BitVec 32 :=
  let c0_i32_808 : BitVec 32 := 0#32
  let v2100 : BitVec 32 := Scalar.addi v2099 c0_i32_808
  v2100

def k1_off105 (k1_t7 : Fin k1_t7_loop.trips) (v2099 : BitVec 32) (c0_i32_808 : BitVec 32) : Fin 3 → Nat :=
  let c1_i32_809 : BitVec 32 := 1#32
  let v2102 : Index := Scalar.indexCast c1_i32_809
  let c0_i32_653 : BitVec 32 := 0#32
  let c1_i32_655 : BitVec 32 := 1#32
  let arg18 : BitVec 32 := Scf.iv c0_i32_653 c1_i32_655 k1_t7
  let c16_i32_807 : BitVec 32 := 16#32
  let v2096 : BitVec 32 := Scalar.muli arg18 c16_i32_807
  let c12_i32 : BitVec 32 := 12#32
  let v2097 : BitVec 32 := Scalar.addi v2096 c12_i32
  let v2103 : Index := Scalar.indexCast v2097
  let v2100 : BitVec 32 := Scalar.addi v2099 c0_i32_808
  let v2101 : BitVec 32 := v2100
  let v2104 : Index := Scalar.indexCast v2101
  ![1, v2103.toNat, v2104.toNat]
def k1_mult281 (v2099 : BitVec 32) : BitVec 32 :=
  let c16_i32_810 : BitVec 32 := 16#32
  let v2108 : BitVec 32 := Scalar.addi v2099 c16_i32_810
  v2108
def k1_mult282 (v2099 : BitVec 32) : BitVec 32 :=
  let c32_i32_812 : BitVec 32 := 32#32
  let v2116 : BitVec 32 := Scalar.addi v2099 c32_i32_812
  v2116
def k1_mult283 (v2099 : BitVec 32) : BitVec 32 :=
  let c48_i32_814 : BitVec 32 := 48#32
  let v2124 : BitVec 32 := Scalar.addi v2099 c48_i32_814
  v2124

def k1_chk67 (k1_t7 : Fin k1_t7_loop.trips) (v2099 : BitVec 32) : Prop :=
  (16 ∣ (k1_mult280 v2099).toNat) ∧
  (∀ (r : Fin 4), ∀ a, (k1_off105 k1_t7 v2099 (BitVec.ofNat 32 (16 * r.val))) a + S1x1x16.size a ≤ S2x50x128.size a) ∧
  (16 ∣ (k1_mult281 v2099).toNat) ∧
  (16 ∣ (k1_mult282 v2099).toNat) ∧
  (16 ∣ (k1_mult283 v2099).toNat)
instance k1_chk67.dec : ∀ (k1_t7 : Fin k1_t7_loop.trips) (v2099 : BitVec 32), Decidable (k1_chk67 k1_t7 v2099) := fun k1_t7 v2099 => decidable_of_iff' _ (Iff.of_eq (k1_chk67.eq_1 k1_t7 v2099))
theorem k1_mult280_dvd : ∀ (k1_t7 : Fin k1_t7_loop.trips) (v2099 : BitVec 32) (k1_hw67 : k1_chk67 k1_t7 v2099), 16 ∣ (k1_mult280 v2099).toNat := fun k1_t7 v2099 k1_hw67 => k1_hw67.1
theorem k1_off105_inb : ∀ (k1_t7 : Fin k1_t7_loop.trips) (v2099 : BitVec 32) (k1_hw67 : k1_chk67 k1_t7 v2099), ∀ (r : Fin 4), ∀ a, (k1_off105 k1_t7 v2099 (BitVec.ofNat 32 (16 * r.val))) a + S1x1x16.size a ≤ S2x50x128.size a := fun k1_t7 v2099 k1_hw67 r => k1_hw67.2.1 r
theorem k1_mult281_dvd : ∀ (k1_t7 : Fin k1_t7_loop.trips) (v2099 : BitVec 32) (k1_hw67 : k1_chk67 k1_t7 v2099), 16 ∣ (k1_mult281 v2099).toNat := fun k1_t7 v2099 k1_hw67 => k1_hw67.2.2.1
theorem k1_mult282_dvd : ∀ (k1_t7 : Fin k1_t7_loop.trips) (v2099 : BitVec 32) (k1_hw67 : k1_chk67 k1_t7 v2099), 16 ∣ (k1_mult282 v2099).toNat := fun k1_t7 v2099 k1_hw67 => k1_hw67.2.2.2.1
theorem k1_mult283_dvd : ∀ (k1_t7 : Fin k1_t7_loop.trips) (v2099 : BitVec 32) (k1_hw67 : k1_chk67 k1_t7 v2099), 16 ∣ (k1_mult283 v2099).toNat := fun k1_t7 v2099 k1_hw67 => k1_hw67.2.2.2.2

def k1_mult284 (v2135 : BitVec 32) : BitVec 32 :=
  let c0_i32_817 : BitVec 32 := 0#32
  let v2136 : BitVec 32 := Scalar.addi v2135 c0_i32_817
  v2136

def k1_off106 (k1_t7 : Fin k1_t7_loop.trips) (v2135 : BitVec 32) (c0_i32_817 : BitVec 32) : Fin 3 → Nat :=
  let c1_i32_818 : BitVec 32 := 1#32
  let v2138 : Index := Scalar.indexCast c1_i32_818
  let c0_i32_653 : BitVec 32 := 0#32
  let c1_i32_655 : BitVec 32 := 1#32
  let arg18 : BitVec 32 := Scf.iv c0_i32_653 c1_i32_655 k1_t7
  let c16_i32_816 : BitVec 32 := 16#32
  let v2132 : BitVec 32 := Scalar.muli arg18 c16_i32_816
  let c13_i32 : BitVec 32 := 13#32
  let v2133 : BitVec 32 := Scalar.addi v2132 c13_i32
  let v2139 : Index := Scalar.indexCast v2133
  let v2136 : BitVec 32 := Scalar.addi v2135 c0_i32_817
  let v2137 : BitVec 32 := v2136
  let v2140 : Index := Scalar.indexCast v2137
  ![1, v2139.toNat, v2140.toNat]
def k1_mult285 (v2135 : BitVec 32) : BitVec 32 :=
  let c16_i32_819 : BitVec 32 := 16#32
  let v2144 : BitVec 32 := Scalar.addi v2135 c16_i32_819
  v2144
def k1_mult286 (v2135 : BitVec 32) : BitVec 32 :=
  let c32_i32_821 : BitVec 32 := 32#32
  let v2152 : BitVec 32 := Scalar.addi v2135 c32_i32_821
  v2152
def k1_mult287 (v2135 : BitVec 32) : BitVec 32 :=
  let c48_i32_823 : BitVec 32 := 48#32
  let v2160 : BitVec 32 := Scalar.addi v2135 c48_i32_823
  v2160

def k1_chk68 (k1_t7 : Fin k1_t7_loop.trips) (v2135 : BitVec 32) : Prop :=
  (16 ∣ (k1_mult284 v2135).toNat) ∧
  (∀ (r : Fin 4), ∀ a, (k1_off106 k1_t7 v2135 (BitVec.ofNat 32 (16 * r.val))) a + S1x1x16.size a ≤ S2x50x128.size a) ∧
  (16 ∣ (k1_mult285 v2135).toNat) ∧
  (16 ∣ (k1_mult286 v2135).toNat) ∧
  (16 ∣ (k1_mult287 v2135).toNat)
instance k1_chk68.dec : ∀ (k1_t7 : Fin k1_t7_loop.trips) (v2135 : BitVec 32), Decidable (k1_chk68 k1_t7 v2135) := fun k1_t7 v2135 => decidable_of_iff' _ (Iff.of_eq (k1_chk68.eq_1 k1_t7 v2135))
theorem k1_mult284_dvd : ∀ (k1_t7 : Fin k1_t7_loop.trips) (v2135 : BitVec 32) (k1_hw68 : k1_chk68 k1_t7 v2135), 16 ∣ (k1_mult284 v2135).toNat := fun k1_t7 v2135 k1_hw68 => k1_hw68.1
theorem k1_off106_inb : ∀ (k1_t7 : Fin k1_t7_loop.trips) (v2135 : BitVec 32) (k1_hw68 : k1_chk68 k1_t7 v2135), ∀ (r : Fin 4), ∀ a, (k1_off106 k1_t7 v2135 (BitVec.ofNat 32 (16 * r.val))) a + S1x1x16.size a ≤ S2x50x128.size a := fun k1_t7 v2135 k1_hw68 r => k1_hw68.2.1 r
theorem k1_mult285_dvd : ∀ (k1_t7 : Fin k1_t7_loop.trips) (v2135 : BitVec 32) (k1_hw68 : k1_chk68 k1_t7 v2135), 16 ∣ (k1_mult285 v2135).toNat := fun k1_t7 v2135 k1_hw68 => k1_hw68.2.2.1
theorem k1_mult286_dvd : ∀ (k1_t7 : Fin k1_t7_loop.trips) (v2135 : BitVec 32) (k1_hw68 : k1_chk68 k1_t7 v2135), 16 ∣ (k1_mult286 v2135).toNat := fun k1_t7 v2135 k1_hw68 => k1_hw68.2.2.2.1
theorem k1_mult287_dvd : ∀ (k1_t7 : Fin k1_t7_loop.trips) (v2135 : BitVec 32) (k1_hw68 : k1_chk68 k1_t7 v2135), 16 ∣ (k1_mult287 v2135).toNat := fun k1_t7 v2135 k1_hw68 => k1_hw68.2.2.2.2

def k1_mult288 (v2171 : BitVec 32) : BitVec 32 :=
  let c0_i32_826 : BitVec 32 := 0#32
  let v2172 : BitVec 32 := Scalar.addi v2171 c0_i32_826
  v2172

def k1_off107 (k1_t7 : Fin k1_t7_loop.trips) (v2171 : BitVec 32) (c0_i32_826 : BitVec 32) : Fin 3 → Nat :=
  let c1_i32_827 : BitVec 32 := 1#32
  let v2174 : Index := Scalar.indexCast c1_i32_827
  let c0_i32_653 : BitVec 32 := 0#32
  let c1_i32_655 : BitVec 32 := 1#32
  let arg18 : BitVec 32 := Scf.iv c0_i32_653 c1_i32_655 k1_t7
  let c16_i32_825 : BitVec 32 := 16#32
  let v2168 : BitVec 32 := Scalar.muli arg18 c16_i32_825
  let c14_i32 : BitVec 32 := 14#32
  let v2169 : BitVec 32 := Scalar.addi v2168 c14_i32
  let v2175 : Index := Scalar.indexCast v2169
  let v2172 : BitVec 32 := Scalar.addi v2171 c0_i32_826
  let v2173 : BitVec 32 := v2172
  let v2176 : Index := Scalar.indexCast v2173
  ![1, v2175.toNat, v2176.toNat]
def k1_mult289 (v2171 : BitVec 32) : BitVec 32 :=
  let c16_i32_828 : BitVec 32 := 16#32
  let v2180 : BitVec 32 := Scalar.addi v2171 c16_i32_828
  v2180
def k1_mult290 (v2171 : BitVec 32) : BitVec 32 :=
  let c32_i32_830 : BitVec 32 := 32#32
  let v2188 : BitVec 32 := Scalar.addi v2171 c32_i32_830
  v2188
def k1_mult291 (v2171 : BitVec 32) : BitVec 32 :=
  let c48_i32_832 : BitVec 32 := 48#32
  let v2196 : BitVec 32 := Scalar.addi v2171 c48_i32_832
  v2196

def k1_chk69 (k1_t7 : Fin k1_t7_loop.trips) (v2171 : BitVec 32) : Prop :=
  (16 ∣ (k1_mult288 v2171).toNat) ∧
  (∀ (r : Fin 4), ∀ a, (k1_off107 k1_t7 v2171 (BitVec.ofNat 32 (16 * r.val))) a + S1x1x16.size a ≤ S2x50x128.size a) ∧
  (16 ∣ (k1_mult289 v2171).toNat) ∧
  (16 ∣ (k1_mult290 v2171).toNat) ∧
  (16 ∣ (k1_mult291 v2171).toNat)
instance k1_chk69.dec : ∀ (k1_t7 : Fin k1_t7_loop.trips) (v2171 : BitVec 32), Decidable (k1_chk69 k1_t7 v2171) := fun k1_t7 v2171 => decidable_of_iff' _ (Iff.of_eq (k1_chk69.eq_1 k1_t7 v2171))
theorem k1_mult288_dvd : ∀ (k1_t7 : Fin k1_t7_loop.trips) (v2171 : BitVec 32) (k1_hw69 : k1_chk69 k1_t7 v2171), 16 ∣ (k1_mult288 v2171).toNat := fun k1_t7 v2171 k1_hw69 => k1_hw69.1
theorem k1_off107_inb : ∀ (k1_t7 : Fin k1_t7_loop.trips) (v2171 : BitVec 32) (k1_hw69 : k1_chk69 k1_t7 v2171), ∀ (r : Fin 4), ∀ a, (k1_off107 k1_t7 v2171 (BitVec.ofNat 32 (16 * r.val))) a + S1x1x16.size a ≤ S2x50x128.size a := fun k1_t7 v2171 k1_hw69 r => k1_hw69.2.1 r
theorem k1_mult289_dvd : ∀ (k1_t7 : Fin k1_t7_loop.trips) (v2171 : BitVec 32) (k1_hw69 : k1_chk69 k1_t7 v2171), 16 ∣ (k1_mult289 v2171).toNat := fun k1_t7 v2171 k1_hw69 => k1_hw69.2.2.1
theorem k1_mult290_dvd : ∀ (k1_t7 : Fin k1_t7_loop.trips) (v2171 : BitVec 32) (k1_hw69 : k1_chk69 k1_t7 v2171), 16 ∣ (k1_mult290 v2171).toNat := fun k1_t7 v2171 k1_hw69 => k1_hw69.2.2.2.1
theorem k1_mult291_dvd : ∀ (k1_t7 : Fin k1_t7_loop.trips) (v2171 : BitVec 32) (k1_hw69 : k1_chk69 k1_t7 v2171), 16 ∣ (k1_mult291 v2171).toNat := fun k1_t7 v2171 k1_hw69 => k1_hw69.2.2.2.2

def k1_mult292 (v2207 : BitVec 32) : BitVec 32 :=
  let c0_i32_835 : BitVec 32 := 0#32
  let v2208 : BitVec 32 := Scalar.addi v2207 c0_i32_835
  v2208

def k1_off108 (k1_t7 : Fin k1_t7_loop.trips) (v2207 : BitVec 32) (c0_i32_835 : BitVec 32) : Fin 3 → Nat :=
  let c1_i32_836 : BitVec 32 := 1#32
  let v2210 : Index := Scalar.indexCast c1_i32_836
  let c0_i32_653 : BitVec 32 := 0#32
  let c1_i32_655 : BitVec 32 := 1#32
  let arg18 : BitVec 32 := Scf.iv c0_i32_653 c1_i32_655 k1_t7
  let c16_i32_834 : BitVec 32 := 16#32
  let v2204 : BitVec 32 := Scalar.muli arg18 c16_i32_834
  let c15_i32 : BitVec 32 := 15#32
  let v2205 : BitVec 32 := Scalar.addi v2204 c15_i32
  let v2211 : Index := Scalar.indexCast v2205
  let v2208 : BitVec 32 := Scalar.addi v2207 c0_i32_835
  let v2209 : BitVec 32 := v2208
  let v2212 : Index := Scalar.indexCast v2209
  ![1, v2211.toNat, v2212.toNat]
def k1_mult293 (v2207 : BitVec 32) : BitVec 32 :=
  let c16_i32_837 : BitVec 32 := 16#32
  let v2216 : BitVec 32 := Scalar.addi v2207 c16_i32_837
  v2216
def k1_mult294 (v2207 : BitVec 32) : BitVec 32 :=
  let c32_i32_839 : BitVec 32 := 32#32
  let v2224 : BitVec 32 := Scalar.addi v2207 c32_i32_839
  v2224
def k1_mult295 (v2207 : BitVec 32) : BitVec 32 :=
  let c48_i32_841 : BitVec 32 := 48#32
  let v2232 : BitVec 32 := Scalar.addi v2207 c48_i32_841
  v2232

def k1_chk70 (k1_t7 : Fin k1_t7_loop.trips) (v2207 : BitVec 32) : Prop :=
  (16 ∣ (k1_mult292 v2207).toNat) ∧
  (∀ (r : Fin 4), ∀ a, (k1_off108 k1_t7 v2207 (BitVec.ofNat 32 (16 * r.val))) a + S1x1x16.size a ≤ S2x50x128.size a) ∧
  (16 ∣ (k1_mult293 v2207).toNat) ∧
  (16 ∣ (k1_mult294 v2207).toNat) ∧
  (16 ∣ (k1_mult295 v2207).toNat)
instance k1_chk70.dec : ∀ (k1_t7 : Fin k1_t7_loop.trips) (v2207 : BitVec 32), Decidable (k1_chk70 k1_t7 v2207) := fun k1_t7 v2207 => decidable_of_iff' _ (Iff.of_eq (k1_chk70.eq_1 k1_t7 v2207))
theorem k1_mult292_dvd : ∀ (k1_t7 : Fin k1_t7_loop.trips) (v2207 : BitVec 32) (k1_hw70 : k1_chk70 k1_t7 v2207), 16 ∣ (k1_mult292 v2207).toNat := fun k1_t7 v2207 k1_hw70 => k1_hw70.1
theorem k1_off108_inb : ∀ (k1_t7 : Fin k1_t7_loop.trips) (v2207 : BitVec 32) (k1_hw70 : k1_chk70 k1_t7 v2207), ∀ (r : Fin 4), ∀ a, (k1_off108 k1_t7 v2207 (BitVec.ofNat 32 (16 * r.val))) a + S1x1x16.size a ≤ S2x50x128.size a := fun k1_t7 v2207 k1_hw70 r => k1_hw70.2.1 r
theorem k1_mult293_dvd : ∀ (k1_t7 : Fin k1_t7_loop.trips) (v2207 : BitVec 32) (k1_hw70 : k1_chk70 k1_t7 v2207), 16 ∣ (k1_mult293 v2207).toNat := fun k1_t7 v2207 k1_hw70 => k1_hw70.2.2.1
theorem k1_mult294_dvd : ∀ (k1_t7 : Fin k1_t7_loop.trips) (v2207 : BitVec 32) (k1_hw70 : k1_chk70 k1_t7 v2207), 16 ∣ (k1_mult294 v2207).toNat := fun k1_t7 v2207 k1_hw70 => k1_hw70.2.2.2.1
theorem k1_mult295_dvd : ∀ (k1_t7 : Fin k1_t7_loop.trips) (v2207 : BitVec 32) (k1_hw70 : k1_chk70 k1_t7 v2207), 16 ∣ (k1_mult295 v2207).toNat := fun k1_t7 v2207 k1_hw70 => k1_hw70.2.2.2.2

def k1_off109 (k1_t5 : Fin k1_t5_loop.trips) : Fin 1 → Nat :=
  let c1024_i32_652 : BitVec 32 := 1024#32
  let c0_i32_571 : BitVec 32 := 0#32
  let c1_i32_573 : BitVec 32 := 1#32
  let arg17 : BitVec 32 := Scf.iv c0_i32_571 c1_i32_573 k1_t5
  let c2_i32_635 : BitVec 32 := 2#32
  let v1543 : BitVec 32 := Scalar.muli arg17 c2_i32_635
  let c1_i32_636 : BitVec 32 := 1#32
  let v1544 : BitVec 32 := Scalar.addi v1543 c1_i32_636
  let c64_i32_651 : BitVec 32 := 64#32
  let v1562 : BitVec 32 := Scalar.muli v1544 c64_i32_651
  let v1563 : BitVec 32 := v1562
  let v1564 : BitVec 32 := Scalar.addi c1024_i32_652 v1563
  let c48_i32_657 : BitVec 32 := 48#32
  let v1567 : BitVec 32 := Scalar.addi v1564 c48_i32_657
  let v1568 : Index := Scalar.indexCast v1567
  ![v1568.toNat]
def k1_mult296 (v1572 : BitVec 32) : BitVec 32 :=
  let c0_i32_658 : BitVec 32 := 0#32
  let v1573 : BitVec 32 := Scalar.addi v1572 c0_i32_658
  v1573

def k1_off110 (v1572 : BitVec 32) (c0_i32_658 : BitVec 32) : Fin 3 → Nat :=
  let c1_i32_659 : BitVec 32 := 1#32
  let v1575 : Index := Scalar.indexCast c1_i32_659
  let c48_i32_660 : BitVec 32 := 48#32
  let v1576 : Index := Scalar.indexCast c48_i32_660
  let v1573 : BitVec 32 := Scalar.addi v1572 c0_i32_658
  let v1574 : BitVec 32 := v1573
  let v1577 : Index := Scalar.indexCast v1574
  ![1, 48, v1577.toNat]
def k1_mult297 (v1572 : BitVec 32) : BitVec 32 :=
  let c16_i32_661 : BitVec 32 := 16#32
  let v1581 : BitVec 32 := Scalar.addi v1572 c16_i32_661
  v1581
def k1_mult298 (v1572 : BitVec 32) : BitVec 32 :=
  let c32_i32_664 : BitVec 32 := 32#32
  let v1589 : BitVec 32 := Scalar.addi v1572 c32_i32_664
  v1589
def k1_mult299 (v1572 : BitVec 32) : BitVec 32 :=
  let c48_i32_667 : BitVec 32 := 48#32
  let v1597 : BitVec 32 := Scalar.addi v1572 c48_i32_667
  v1597

def k1_chk71 (v1572 : BitVec 32) : Prop :=
  (16 ∣ (k1_mult296 v1572).toNat) ∧
  (∀ (r : Fin 4), ∀ a, (k1_off110 v1572 (BitVec.ofNat 32 (16 * r.val))) a + S1x1x16.size a ≤ S2x50x128.size a) ∧
  (16 ∣ (k1_mult297 v1572).toNat) ∧
  (16 ∣ (k1_mult298 v1572).toNat) ∧
  (16 ∣ (k1_mult299 v1572).toNat)
instance k1_chk71.dec : ∀ (v1572 : BitVec 32), Decidable (k1_chk71 v1572) := fun v1572 => decidable_of_iff' _ (Iff.of_eq (k1_chk71.eq_1 v1572))
theorem k1_mult296_dvd : ∀ (v1572 : BitVec 32) (k1_hw71 : k1_chk71 v1572), 16 ∣ (k1_mult296 v1572).toNat := fun v1572 k1_hw71 => k1_hw71.1
theorem k1_off110_inb : ∀ (v1572 : BitVec 32) (k1_hw71 : k1_chk71 v1572), ∀ (r : Fin 4), ∀ a, (k1_off110 v1572 (BitVec.ofNat 32 (16 * r.val))) a + S1x1x16.size a ≤ S2x50x128.size a := fun v1572 k1_hw71 r => k1_hw71.2.1 r
theorem k1_mult297_dvd : ∀ (v1572 : BitVec 32) (k1_hw71 : k1_chk71 v1572), 16 ∣ (k1_mult297 v1572).toNat := fun v1572 k1_hw71 => k1_hw71.2.2.1
theorem k1_mult298_dvd : ∀ (v1572 : BitVec 32) (k1_hw71 : k1_chk71 v1572), 16 ∣ (k1_mult298 v1572).toNat := fun v1572 k1_hw71 => k1_hw71.2.2.2.1
theorem k1_mult299_dvd : ∀ (v1572 : BitVec 32) (k1_hw71 : k1_chk71 v1572), 16 ∣ (k1_mult299 v1572).toNat := fun v1572 k1_hw71 => k1_hw71.2.2.2.2

def k1_mult300 (v1606 : BitVec 32) : BitVec 32 :=
  let c0_i32_670 : BitVec 32 := 0#32
  let v1607 : BitVec 32 := Scalar.addi v1606 c0_i32_670
  v1607

def k1_off111 (v1606 : BitVec 32) (c0_i32_670 : BitVec 32) : Fin 3 → Nat :=
  let c1_i32_671 : BitVec 32 := 1#32
  let v1609 : Index := Scalar.indexCast c1_i32_671
  let c49_i32_672 : BitVec 32 := 49#32
  let v1610 : Index := Scalar.indexCast c49_i32_672
  let v1607 : BitVec 32 := Scalar.addi v1606 c0_i32_670
  let v1608 : BitVec 32 := v1607
  let v1611 : Index := Scalar.indexCast v1608
  ![1, 49, v1611.toNat]
def k1_mult301 (v1606 : BitVec 32) : BitVec 32 :=
  let c16_i32_673 : BitVec 32 := 16#32
  let v1615 : BitVec 32 := Scalar.addi v1606 c16_i32_673
  v1615
def k1_mult302 (v1606 : BitVec 32) : BitVec 32 :=
  let c32_i32_676 : BitVec 32 := 32#32
  let v1623 : BitVec 32 := Scalar.addi v1606 c32_i32_676
  v1623
def k1_mult303 (v1606 : BitVec 32) : BitVec 32 :=
  let c48_i32_679 : BitVec 32 := 48#32
  let v1631 : BitVec 32 := Scalar.addi v1606 c48_i32_679
  v1631

def k1_chk72 (v1606 : BitVec 32) : Prop :=
  (16 ∣ (k1_mult300 v1606).toNat) ∧
  (∀ (r : Fin 4), ∀ a, (k1_off111 v1606 (BitVec.ofNat 32 (16 * r.val))) a + S1x1x16.size a ≤ S2x50x128.size a) ∧
  (16 ∣ (k1_mult301 v1606).toNat) ∧
  (16 ∣ (k1_mult302 v1606).toNat) ∧
  (16 ∣ (k1_mult303 v1606).toNat)
instance k1_chk72.dec : ∀ (v1606 : BitVec 32), Decidable (k1_chk72 v1606) := fun v1606 => decidable_of_iff' _ (Iff.of_eq (k1_chk72.eq_1 v1606))
theorem k1_mult300_dvd : ∀ (v1606 : BitVec 32) (k1_hw72 : k1_chk72 v1606), 16 ∣ (k1_mult300 v1606).toNat := fun v1606 k1_hw72 => k1_hw72.1
theorem k1_off111_inb : ∀ (v1606 : BitVec 32) (k1_hw72 : k1_chk72 v1606), ∀ (r : Fin 4), ∀ a, (k1_off111 v1606 (BitVec.ofNat 32 (16 * r.val))) a + S1x1x16.size a ≤ S2x50x128.size a := fun v1606 k1_hw72 r => k1_hw72.2.1 r
theorem k1_mult301_dvd : ∀ (v1606 : BitVec 32) (k1_hw72 : k1_chk72 v1606), 16 ∣ (k1_mult301 v1606).toNat := fun v1606 k1_hw72 => k1_hw72.2.2.1
theorem k1_mult302_dvd : ∀ (v1606 : BitVec 32) (k1_hw72 : k1_chk72 v1606), 16 ∣ (k1_mult302 v1606).toNat := fun v1606 k1_hw72 => k1_hw72.2.2.2.1
theorem k1_mult303_dvd : ∀ (v1606 : BitVec 32) (k1_hw72 : k1_chk72 v1606), 16 ∣ (k1_mult303 v1606).toNat := fun v1606 k1_hw72 => k1_hw72.2.2.2.2

def k1_off112 (k1_t5 : Fin k1_t5_loop.trips) : Fin 3 → Nat :=
  let c1_i32_682 : BitVec 32 := 1#32
  let v1639 : Index := Scalar.indexCast c1_i32_682
  let c0_i32_571 : BitVec 32 := 0#32
  let c1_i32_573 : BitVec 32 := 1#32
  let arg17 : BitVec 32 := Scf.iv c0_i32_571 c1_i32_573 k1_t5
  let c2_i32_635 : BitVec 32 := 2#32
  let v1543 : BitVec 32 := Scalar.muli arg17 c2_i32_635
  let c1_i32_636 : BitVec 32 := 1#32
  let v1544 : BitVec 32 := Scalar.addi v1543 c1_i32_636
  let v1640 : Index := Scalar.indexCast v1544
  let c0_683 : Index := 0#32
  ![1, v1640.toNat, 0]
def k1_off113 (k1_t5 : Fin k1_t5_loop.trips) : Fin 3 → Nat :=
  let c1_i32_684 : BitVec 32 := 1#32
  let v1644 : Index := Scalar.indexCast c1_i32_684
  let c0_i32_571 : BitVec 32 := 0#32
  let c1_i32_573 : BitVec 32 := 1#32
  let arg17 : BitVec 32 := Scf.iv c0_i32_571 c1_i32_573 k1_t5
  let c2_i32_635 : BitVec 32 := 2#32
  let v1543 : BitVec 32 := Scalar.muli arg17 c2_i32_635
  let c1_i32_636 : BitVec 32 := 1#32
  let v1544 : BitVec 32 := Scalar.addi v1543 c1_i32_636
  let v1645 : Index := Scalar.indexCast v1544
  let c16_685 : Index := 16#32
  ![1, v1645.toNat, 16]
def k1_off114 (k1_t5 : Fin k1_t5_loop.trips) : Fin 3 → Nat :=
  let c1_i32_686 : BitVec 32 := 1#32
  let v1649 : Index := Scalar.indexCast c1_i32_686
  let c0_i32_571 : BitVec 32 := 0#32
  let c1_i32_573 : BitVec 32 := 1#32
  let arg17 : BitVec 32 := Scf.iv c0_i32_571 c1_i32_573 k1_t5
  let c2_i32_635 : BitVec 32 := 2#32
  let v1543 : BitVec 32 := Scalar.muli arg17 c2_i32_635
  let c1_i32_636 : BitVec 32 := 1#32
  let v1544 : BitVec 32 := Scalar.addi v1543 c1_i32_636
  let v1650 : Index := Scalar.indexCast v1544
  let c32_687 : Index := 32#32
  ![1, v1650.toNat, 32]
def k1_off115 (k1_t5 : Fin k1_t5_loop.trips) : Fin 3 → Nat :=
  let c1_i32_688 : BitVec 32 := 1#32
  let v1654 : Index := Scalar.indexCast c1_i32_688
  let c0_i32_571 : BitVec 32 := 0#32
  let c1_i32_573 : BitVec 32 := 1#32
  let arg17 : BitVec 32 := Scf.iv c0_i32_571 c1_i32_573 k1_t5
  let c2_i32_635 : BitVec 32 := 2#32
  let v1543 : BitVec 32 := Scalar.muli arg17 c2_i32_635
  let c1_i32_636 : BitVec 32 := 1#32
  let v1544 : BitVec 32 := Scalar.addi v1543 c1_i32_636
  let v1655 : Index := Scalar.indexCast v1544
  let c48_689 : Index := 48#32
  ![1, v1655.toNat, 48]
def k1_off116 (i : grid1.Coords) (c96_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v1370 : BitVec 32 := Scalar.addi v2 c96_i32
  let c0_i32_528 : BitVec 32 := 0#32
  ![v1370.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x50 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x50 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x50 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x32768.size a < S64x1000000.size a
  hwx0_0 : ∀ i : grid0.Coords, EltTy.bits .f32 = 32 ∨ (Rect.unit (s := S64x1000000) (fun a => cc0_transform_0 i a * S64x32768.size a) (fun a => (Pipeline.Clip.of (cc0_transform_0 i a) (S64x32768.size a) (S64x1000000.size a)).extent (S64x32768.size a)) fun a => Pipeline.Clip.inb (Pipeline.Clip.ok_of (hstart0_0 i a))).WholeWords (EltTy.packing .f32)
  hwxs0_0 : ∀ i : grid0.Coords, EltTy.bits .f32 = 32 ∨ (Rect.unit (s := S64x32768) (fun _ => 0) (fun a => (Pipeline.Clip.of (cc0_transform_0 i a) (S64x32768.size a) (S64x1000000.size a)).extent (S64x32768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64x128.size a ≤ S31x256x64x128.size a
  hwx0_1 : ∀ i : grid0.Coords, EltTy.bits .f32 = 32 ∨ (Rect.block (s := S31x256x64x128) S1x256x64x128.size (cc0_transform_1 i) (hinb0_1 i)).WholeWords (EltTy.packing .f32)

class K1.Facts₀ : Prop where
  hcore1 : grid1.bound 0 ≤ τ.nSC
  hsub1 : grid1.bound 1 ≤ τ.nSub
  k1_off1_inb : ∀ i : grid1.Coords, ∀ (r : Fin 2), ∀ a, (k1_off1 i (BitVec.ofNat 32 (1024 * r.val))) a + S1024.size a ≤ S262144.size a
  k1_mult1_dvd : 64 ∣ k1_mult1.toNat
  k1_off2_inb : ∀ a, k1_off2 a + S50.size a ≤ S2048.size a
  k1_t1_ok : k1_t1_loop.OK
  k1_off3_inb : ∀ (i : grid1.Coords) (k1_t1 : Fin k1_t1_loop.trips), ∀ (k1_h1 : k1_cond1 k1_t1 = 1#1), ∀ a, (k1_off3 i k1_t1) a + S16x64.size a ≤ S4096x64.size a
  k1_off4_inb : ∀ (i : grid1.Coords) (k1_t1 : Fin k1_t1_loop.trips), ∀ (k1_h2 : k1_cond2 k1_t1 = 1#1), ∀ a, (k1_off4 i k1_t1) a + S1024.size a ≤ S262144.size a
  k1_off5_inb : ∀ (i : grid1.Coords) (k1_t1 : Fin k1_t1_loop.trips), ∀ (k1_h3 : k1_cond3 k1_t1 = 1#1), ∀ a, (k1_off5 i k1_t1) a + S1024.size a ≤ S262144.size a
  k1_t2_ok : k1_t2_loop.OK
  k1_mult2_dvd : ∀ k1_t2 : Fin k1_t2_loop.trips, 64 ∣ (k1_mult2 k1_t2).toNat
  k1_off6_inb : ∀ k1_t2 : Fin k1_t2_loop.trips, ∀ a, (k1_off6 k1_t2) a + S50.size a ≤ S2048.size a
  k1_mult3_dvd : ∀ k1_t2 : Fin k1_t2_loop.trips, 64 ∣ (k1_mult3 k1_t2).toNat
  k1_off7_inb : ∀ k1_t2 : Fin k1_t2_loop.trips, ∀ a, (k1_off7 k1_t2) a + S50.size a ≤ S2048.size a
  k1_mult4_dvd : ∀ k1_t2 : Fin k1_t2_loop.trips, 16 ∣ (k1_mult4 k1_t2).toNat
  k1_t3_ok : k1_t3_loop.OK
  k1_off8_inb : ∀ (k1_t2 : Fin k1_t2_loop.trips) (k1_t3 : Fin k1_t3_loop.trips), ∀ a, (k1_off8 k1_t2 k1_t3) a + S16.size a ≤ S2048.size a
  k1_off25_inb : ∀ k1_t2 : Fin k1_t2_loop.trips, ∀ a, (k1_off25 k1_t2) a + S16.size a ≤ S2048.size a
  k1_off28_inb : ∀ k1_t2 : Fin k1_t2_loop.trips, ∀ a, (k1_off28 k1_t2) a + S1x1x16.size a ≤ S2x16x64.size a
  k1_off29_inb : ∀ k1_t2 : Fin k1_t2_loop.trips, ∀ a, (k1_off29 k1_t2) a + S1x1x16.size a ≤ S2x16x64.size a
  k1_off30_inb : ∀ k1_t2 : Fin k1_t2_loop.trips, ∀ a, (k1_off30 k1_t2) a + S1x1x16.size a ≤ S2x16x64.size a
  k1_off31_inb : ∀ k1_t2 : Fin k1_t2_loop.trips, ∀ a, (k1_off31 k1_t2) a + S1x1x16.size a ≤ S2x16x64.size a
  k1_mult77_dvd : ∀ k1_t2 : Fin k1_t2_loop.trips, 64 ∣ (k1_mult77 k1_t2).toNat
  k1_off32_inb : ∀ k1_t2 : Fin k1_t2_loop.trips, ∀ a, (k1_off32 k1_t2) a + S50.size a ≤ S2048.size a
  k1_mult78_dvd : ∀ k1_t2 : Fin k1_t2_loop.trips, ∀ (k1_h4 : k1_cond4 k1_t2 = 1#1), 64 ∣ (k1_mult78 k1_t2).toNat
  k1_off33_inb : ∀ k1_t2 : Fin k1_t2_loop.trips, ∀ (k1_h4 : k1_cond4 k1_t2 = 1#1), ∀ a, (k1_off33 k1_t2) a + S50.size a ≤ S2048.size a
  k1_mult79_dvd : ∀ (k1_t1 : Fin k1_t1_loop.trips) (k1_t2 : Fin k1_t2_loop.trips), ∀ (k1_h5 : k1_cond5 k1_t1 k1_t2 = 1#1), 64 ∣ k1_mult79.toNat
  k1_off34_inb : ∀ (k1_t1 : Fin k1_t1_loop.trips) (k1_t2 : Fin k1_t2_loop.trips), ∀ (k1_h5 : k1_cond5 k1_t1 k1_t2 = 1#1), ∀ a, k1_off34 a + S50.size a ≤ S2048.size a
  k1_mult80_dvd : ∀ k1_t2 : Fin k1_t2_loop.trips, 16 ∣ (k1_mult80 k1_t2).toNat
  k1_t4_ok : k1_t4_loop.OK
  k1_off35_inb : ∀ (k1_t2 : Fin k1_t2_loop.trips) (k1_t4 : Fin k1_t4_loop.trips), ∀ a, (k1_off35 k1_t2 k1_t4) a + S16.size a ≤ S2048.size a
  k1_off52_inb : ∀ k1_t2 : Fin k1_t2_loop.trips, ∀ a, (k1_off52 k1_t2) a + S16.size a ≤ S2048.size a
  k1_off55_inb : ∀ k1_t2 : Fin k1_t2_loop.trips, ∀ a, (k1_off55 k1_t2) a + S1x1x16.size a ≤ S2x16x64.size a
  k1_off56_inb : ∀ k1_t2 : Fin k1_t2_loop.trips, ∀ a, (k1_off56 k1_t2) a + S1x1x16.size a ≤ S2x16x64.size a
  k1_off57_inb : ∀ k1_t2 : Fin k1_t2_loop.trips, ∀ a, (k1_off57 k1_t2) a + S1x1x16.size a ≤ S2x16x64.size a
  k1_off58_inb : ∀ k1_t2 : Fin k1_t2_loop.trips, ∀ a, (k1_off58 k1_t2) a + S1x1x16.size a ≤ S2x16x64.size a
  k1_off59_inb : ∀ (i : grid1.Coords) (k1_t1 : Fin k1_t1_loop.trips), ∀ (r : Fin 2), ∀ a, (k1_off59 i k1_t1 (BitVec.ofNat 32 r.val)) a + S16x64.size a ≤ S4096x64.size a
  k1_off60_inb : ∀ (i : grid1.Coords) (k1_t1 : Fin k1_t1_loop.trips), ∀ (k1_h6 : k1_cond6 k1_t1 = 1#1), ∀ a, (k1_off60 i k1_t1) a + S16x64.size a ≤ S4096x64.size a
  k1_off61_inb : ∀ (i : grid1.Coords) (k1_t1 : Fin k1_t1_loop.trips), ∀ (k1_h7 : k1_cond7 k1_t1 = 1#1), ∀ a, (k1_off61 i k1_t1) a + S1024.size a ≤ S262144.size a
  k1_off62_inb : ∀ (i : grid1.Coords) (k1_t1 : Fin k1_t1_loop.trips), ∀ (k1_h8 : k1_cond8 k1_t1 = 1#1), ∀ a, (k1_off62 i k1_t1) a + S1024.size a ≤ S262144.size a
  k1_t5_ok : k1_t5_loop.OK
  k1_mult153_dvd : ∀ k1_t5 : Fin k1_t5_loop.trips, 64 ∣ (k1_mult153 k1_t5).toNat
  k1_off63_inb : ∀ k1_t5 : Fin k1_t5_loop.trips, ∀ a, (k1_off63 k1_t5) a + S50.size a ≤ S2048.size a
  k1_mult154_dvd : ∀ k1_t5 : Fin k1_t5_loop.trips, 64 ∣ (k1_mult154 k1_t5).toNat
  k1_off64_inb : ∀ k1_t5 : Fin k1_t5_loop.trips, ∀ a, (k1_off64 k1_t5) a + S50.size a ≤ S2048.size a
  k1_mult155_dvd : ∀ k1_t5 : Fin k1_t5_loop.trips, 16 ∣ (k1_mult155 k1_t5).toNat
  k1_t6_ok : k1_t6_loop.OK
  k1_off65_inb : ∀ (k1_t5 : Fin k1_t5_loop.trips) (k1_t6 : Fin k1_t6_loop.trips), ∀ a, (k1_off65 k1_t5 k1_t6) a + S16.size a ≤ S2048.size a
  k1_off82_inb : ∀ k1_t5 : Fin k1_t5_loop.trips, ∀ a, (k1_off82 k1_t5) a + S16.size a ≤ S2048.size a
  k1_off85_inb : ∀ k1_t5 : Fin k1_t5_loop.trips, ∀ a, (k1_off85 k1_t5) a + S1x1x16.size a ≤ S2x16x64.size a
  k1_off86_inb : ∀ k1_t5 : Fin k1_t5_loop.trips, ∀ a, (k1_off86 k1_t5) a + S1x1x16.size a ≤ S2x16x64.size a
  k1_off87_inb : ∀ k1_t5 : Fin k1_t5_loop.trips, ∀ a, (k1_off87 k1_t5) a + S1x1x16.size a ≤ S2x16x64.size a
  k1_off88_inb : ∀ k1_t5 : Fin k1_t5_loop.trips, ∀ a, (k1_off88 k1_t5) a + S1x1x16.size a ≤ S2x16x64.size a
  k1_mult228_dvd : ∀ k1_t5 : Fin k1_t5_loop.trips, 64 ∣ (k1_mult228 k1_t5).toNat
  k1_off89_inb : ∀ k1_t5 : Fin k1_t5_loop.trips, ∀ a, (k1_off89 k1_t5) a + S50.size a ≤ S2048.size a
  k1_mult229_dvd : ∀ k1_t5 : Fin k1_t5_loop.trips, ∀ (k1_h9 : k1_cond9 k1_t5 = 1#1), 64 ∣ (k1_mult229 k1_t5).toNat
  k1_off90_inb : ∀ k1_t5 : Fin k1_t5_loop.trips, ∀ (k1_h9 : k1_cond9 k1_t5 = 1#1), ∀ a, (k1_off90 k1_t5) a + S50.size a ≤ S2048.size a
  k1_mult230_dvd : ∀ (k1_t1 : Fin k1_t1_loop.trips) (k1_t5 : Fin k1_t5_loop.trips), ∀ (k1_h10 : k1_cond10 k1_t1 k1_t5 = 1#1), 64 ∣ k1_mult230.toNat
  k1_off91_inb : ∀ (k1_t1 : Fin k1_t1_loop.trips) (k1_t5 : Fin k1_t5_loop.trips), ∀ (k1_h10 : k1_cond10 k1_t1 k1_t5 = 1#1), ∀ a, k1_off91 a + S50.size a ≤ S2048.size a
  k1_mult231_dvd : ∀ k1_t5 : Fin k1_t5_loop.trips, 16 ∣ (k1_mult231 k1_t5).toNat
  k1_t7_ok : k1_t7_loop.OK
  k1_off92_inb : ∀ (k1_t5 : Fin k1_t5_loop.trips) (k1_t7 : Fin k1_t7_loop.trips), ∀ a, (k1_off92 k1_t5 k1_t7) a + S16.size a ≤ S2048.size a
  k1_off109_inb : ∀ k1_t5 : Fin k1_t5_loop.trips, ∀ a, (k1_off109 k1_t5) a + S16.size a ≤ S2048.size a
  k1_off112_inb : ∀ k1_t5 : Fin k1_t5_loop.trips, ∀ a, (k1_off112 k1_t5) a + S1x1x16.size a ≤ S2x16x64.size a
  k1_off113_inb : ∀ k1_t5 : Fin k1_t5_loop.trips, ∀ a, (k1_off113 k1_t5) a + S1x1x16.size a ≤ S2x16x64.size a
  k1_off114_inb : ∀ k1_t5 : Fin k1_t5_loop.trips, ∀ a, (k1_off114 k1_t5) a + S1x1x16.size a ≤ S2x16x64.size a
  k1_off115_inb : ∀ k1_t5 : Fin k1_t5_loop.trips, ∀ a, (k1_off115 k1_t5) a + S1x1x16.size a ≤ S2x16x64.size a
  k1_off116_inb : ∀ i : grid1.Coords, ∀ (r : Fin 2), ∀ a, (k1_off116 i (BitVec.ofNat 32 (96 + 16 * r.val))) a + S16x64.size a ≤ S4096x64.size a

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S4096x64.size a
  hwx2_0 : ∀ i : grid2.Coords, EltTy.bits .f32 = 32 ∨ (Rect.block (s := S4096x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x50.size a ≤ S256x50.size a
  hwx2_3 : ∀ i : grid2.Coords, EltTy.bits .f32 = 32 ∨ (Rect.block (s := S256x50) S256x50.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x50.size a ≤ S1x50.size a
  hwx2_4 : ∀ i : grid2.Coords, EltTy.bits .f32 = 32 ∨ (Rect.block (s := S1x50) S1x50.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x50.size a ≤ S4096x50.size a
  hwx2_5 : ∀ i : grid2.Coords, EltTy.bits .f32 = 32 ∨ (Rect.block (s := S4096x50) S512x50.size (cc2_transform_5 i) (hinb2_5 i)).WholeWords (EltTy.packing .f32)

class Shapes1.Facts₀ : Prop where
  transposes_S1000000x64_S64x1000000_1_0 : S1000000x64.Transposes [1, 0] S64x1000000
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  iota_S64x64_d0_w32 : S64x64.Iotas .tc 32 [0]
  iota_S64x64_d1_w32 : S64x64.Iotas .tc 32 [1]
  natLt_1_32 : 1 < 32
  slices_S32768x64_o0_0_S64x64 : S32768x64.Slices ![0, 0] S64x64
  inb_S1x256x64x128_S1x1x64x64_0_0_0_0 : ∀ a, (![0, 0, 0, 0] : Fin 4 → Nat) a + S1x1x64x64.size a ≤ S1x256x64x128.size a
  h_S1x1x64x64 : 0 < S1x1x64x64.numel
  shapeCasts_S1x1x64x64_S64x64 : S1x1x64x64.ShapeCasts S64x64
  shapeCasts_S64x64_S1x1x64x64 : S64x64.ShapeCasts S1x1x64x64
  slices_S32768x64_o64_0_S64x64 : S32768x64.Slices ![64, 0] S64x64
  inb_S1x256x64x128_S1x1x64x64_0_0_0_64 : ∀ a, (![0, 0, 0, 64] : Fin 4 → Nat) a + S1x1x64x64.size a ≤ S1x256x64x128.size a
  slices_S32768x64_o128_0_S64x64 : S32768x64.Slices ![128, 0] S64x64
  inb_S1x256x64x128_S1x1x64x64_0_1_0_0 : ∀ a, (![0, 1, 0, 0] : Fin 4 → Nat) a + S1x1x64x64.size a ≤ S1x256x64x128.size a
  slices_S32768x64_o192_0_S64x64 : S32768x64.Slices ![192, 0] S64x64
  inb_S1x256x64x128_S1x1x64x64_0_1_0_64 : ∀ a, (![0, 1, 0, 64] : Fin 4 → Nat) a + S1x1x64x64.size a ≤ S1x256x64x128.size a
  slices_S32768x64_o256_0_S64x64 : S32768x64.Slices ![256, 0] S64x64
  inb_S1x256x64x128_S1x1x64x64_0_2_0_0 : ∀ a, (![0, 2, 0, 0] : Fin 4 → Nat) a + S1x1x64x64.size a ≤ S1x256x64x128.size a
  slices_S32768x64_o320_0_S64x64 : S32768x64.Slices ![320, 0] S64x64
  inb_S1x256x64x128_S1x1x64x64_0_2_0_64 : ∀ a, (![0, 2, 0, 64] : Fin 4 → Nat) a + S1x1x64x64.size a ≤ S1x256x64x128.size a
  slices_S32768x64_o384_0_S64x64 : S32768x64.Slices ![384, 0] S64x64
  inb_S1x256x64x128_S1x1x64x64_0_3_0_0 : ∀ a, (![0, 3, 0, 0] : Fin 4 → Nat) a + S1x1x64x64.size a ≤ S1x256x64x128.size a
  slices_S32768x64_o448_0_S64x64 : S32768x64.Slices ![448, 0] S64x64
  inb_S1x256x64x128_S1x1x64x64_0_3_0_64 : ∀ a, (![0, 3, 0, 64] : Fin 4 → Nat) a + S1x1x64x64.size a ≤ S1x256x64x128.size a
  slices_S32768x64_o512_0_S64x64 : S32768x64.Slices ![512, 0] S64x64
  inb_S1x256x64x128_S1x1x64x64_0_4_0_0 : ∀ a, (![0, 4, 0, 0] : Fin 4 → Nat) a + S1x1x64x64.size a ≤ S1x256x64x128.size a
  slices_S32768x64_o576_0_S64x64 : S32768x64.Slices ![576, 0] S64x64
  inb_S1x256x64x128_S1x1x64x64_0_4_0_64 : ∀ a, (![0, 4, 0, 64] : Fin 4 → Nat) a + S1x1x64x64.size a ≤ S1x256x64x128.size a
  slices_S32768x64_o640_0_S64x64 : S32768x64.Slices ![640, 0] S64x64
  inb_S1x256x64x128_S1x1x64x64_0_5_0_0 : ∀ a, (![0, 5, 0, 0] : Fin 4 → Nat) a + S1x1x64x64.size a ≤ S1x256x64x128.size a
  slices_S32768x64_o704_0_S64x64 : S32768x64.Slices ![704, 0] S64x64
  inb_S1x256x64x128_S1x1x64x64_0_5_0_64 : ∀ a, (![0, 5, 0, 64] : Fin 4 → Nat) a + S1x1x64x64.size a ≤ S1x256x64x128.size a
  slices_S32768x64_o768_0_S64x64 : S32768x64.Slices ![768, 0] S64x64
  inb_S1x256x64x128_S1x1x64x64_0_6_0_0 : ∀ a, (![0, 6, 0, 0] : Fin 4 → Nat) a + S1x1x64x64.size a ≤ S1x256x64x128.size a
  slices_S32768x64_o832_0_S64x64 : S32768x64.Slices ![832, 0] S64x64
  inb_S1x256x64x128_S1x1x64x64_0_6_0_64 : ∀ a, (![0, 6, 0, 64] : Fin 4 → Nat) a + S1x1x64x64.size a ≤ S1x256x64x128.size a
  slices_S32768x64_o896_0_S64x64 : S32768x64.Slices ![896, 0] S64x64
  inb_S1x256x64x128_S1x1x64x64_0_7_0_0 : ∀ a, (![0, 7, 0, 0] : Fin 4 → Nat) a + S1x1x64x64.size a ≤ S1x256x64x128.size a
  slices_S32768x64_o960_0_S64x64 : S32768x64.Slices ![960, 0] S64x64
  inb_S1x256x64x128_S1x1x64x64_0_7_0_64 : ∀ a, (![0, 7, 0, 64] : Fin 4 → Nat) a + S1x1x64x64.size a ≤ S1x256x64x128.size a
  slices_S32768x64_o1024_0_S64x64 : S32768x64.Slices ![1024, 0] S64x64
  inb_S1x256x64x128_S1x1x64x64_0_8_0_0 : ∀ a, (![0, 8, 0, 0] : Fin 4 → Nat) a + S1x1x64x64.size a ≤ S1x256x64x128.size a
  slices_S32768x64_o1088_0_S64x64 : S32768x64.Slices ![1088, 0] S64x64
  inb_S1x256x64x128_S1x1x64x64_0_8_0_64 : ∀ a, (![0, 8, 0, 64] : Fin 4 → Nat) a + S1x1x64x64.size a ≤ S1x256x64x128.size a
  slices_S32768x64_o1152_0_S64x64 : S32768x64.Slices ![1152, 0] S64x64
  inb_S1x256x64x128_S1x1x64x64_0_9_0_0 : ∀ a, (![0, 9, 0, 0] : Fin 4 → Nat) a + S1x1x64x64.size a ≤ S1x256x64x128.size a
  slices_S32768x64_o1216_0_S64x64 : S32768x64.Slices ![1216, 0] S64x64
  inb_S1x256x64x128_S1x1x64x64_0_9_0_64 : ∀ a, (![0, 9, 0, 64] : Fin 4 → Nat) a + S1x1x64x64.size a ≤ S1x256x64x128.size a
  slices_S32768x64_o1280_0_S64x64 : S32768x64.Slices ![1280, 0] S64x64
  inb_S1x256x64x128_S1x1x64x64_0_10_0_0 : ∀ a, (![0, 10, 0, 0] : Fin 4 → Nat) a + S1x1x64x64.size a ≤ S1x256x64x128.size a
  slices_S32768x64_o1344_0_S64x64 : S32768x64.Slices ![1344, 0] S64x64
  inb_S1x256x64x128_S1x1x64x64_0_10_0_64 : ∀ a, (![0, 10, 0, 64] : Fin 4 → Nat) a + S1x1x64x64.size a ≤ S1x256x64x128.size a
  slices_S32768x64_o1408_0_S64x64 : S32768x64.Slices ![1408, 0] S64x64
  inb_S1x256x64x128_S1x1x64x64_0_11_0_0 : ∀ a, (![0, 11, 0, 0] : Fin 4 → Nat) a + S1x1x64x64.size a ≤ S1x256x64x128.size a
  slices_S32768x64_o1472_0_S64x64 : S32768x64.Slices ![1472, 0] S64x64
  inb_S1x256x64x128_S1x1x64x64_0_11_0_64 : ∀ a, (![0, 11, 0, 64] : Fin 4 → Nat) a + S1x1x64x64.size a ≤ S1x256x64x128.size a
  slices_S32768x64_o1536_0_S64x64 : S32768x64.Slices ![1536, 0] S64x64
  inb_S1x256x64x128_S1x1x64x64_0_12_0_0 : ∀ a, (![0, 12, 0, 0] : Fin 4 → Nat) a + S1x1x64x64.size a ≤ S1x256x64x128.size a
  slices_S32768x64_o1600_0_S64x64 : S32768x64.Slices ![1600, 0] S64x64
  inb_S1x256x64x128_S1x1x64x64_0_12_0_64 : ∀ a, (![0, 12, 0, 64] : Fin 4 → Nat) a + S1x1x64x64.size a ≤ S1x256x64x128.size a
  slices_S32768x64_o1664_0_S64x64 : S32768x64.Slices ![1664, 0] S64x64
  inb_S1x256x64x128_S1x1x64x64_0_13_0_0 : ∀ a, (![0, 13, 0, 0] : Fin 4 → Nat) a + S1x1x64x64.size a ≤ S1x256x64x128.size a
  slices_S32768x64_o1728_0_S64x64 : S32768x64.Slices ![1728, 0] S64x64
  inb_S1x256x64x128_S1x1x64x64_0_13_0_64 : ∀ a, (![0, 13, 0, 64] : Fin 4 → Nat) a + S1x1x64x64.size a ≤ S1x256x64x128.size a
  slices_S32768x64_o1792_0_S64x64 : S32768x64.Slices ![1792, 0] S64x64
  inb_S1x256x64x128_S1x1x64x64_0_14_0_0 : ∀ a, (![0, 14, 0, 0] : Fin 4 → Nat) a + S1x1x64x64.size a ≤ S1x256x64x128.size a
  slices_S32768x64_o1856_0_S64x64 : S32768x64.Slices ![1856, 0] S64x64
  inb_S1x256x64x128_S1x1x64x64_0_14_0_64 : ∀ a, (![0, 14, 0, 64] : Fin 4 → Nat) a + S1x1x64x64.size a ≤ S1x256x64x128.size a
  slices_S32768x64_o1920_0_S64x64 : S32768x64.Slices ![1920, 0] S64x64
  inb_S1x256x64x128_S1x1x64x64_0_15_0_0 : ∀ a, (![0, 15, 0, 0] : Fin 4 → Nat) a + S1x1x64x64.size a ≤ S1x256x64x128.size a
  slices_S32768x64_o1984_0_S64x64 : S32768x64.Slices ![1984, 0] S64x64
  inb_S1x256x64x128_S1x1x64x64_0_15_0_64 : ∀ a, (![0, 15, 0, 64] : Fin 4 → Nat) a + S1x1x64x64.size a ≤ S1x256x64x128.size a
  slices_S32768x64_o2048_0_S64x64 : S32768x64.Slices ![2048, 0] S64x64
  inb_S1x256x64x128_S1x1x64x64_0_16_0_0 : ∀ a, (![0, 16, 0, 0] : Fin 4 → Nat) a + S1x1x64x64.size a ≤ S1x256x64x128.size a
  slices_S32768x64_o2112_0_S64x64 : S32768x64.Slices ![2112, 0] S64x64
  inb_S1x256x64x128_S1x1x64x64_0_16_0_64 : ∀ a, (![0, 16, 0, 64] : Fin 4 → Nat) a + S1x1x64x64.size a ≤ S1x256x64x128.size a
  slices_S32768x64_o2176_0_S64x64 : S32768x64.Slices ![2176, 0] S64x64
  inb_S1x256x64x128_S1x1x64x64_0_17_0_0 : ∀ a, (![0, 17, 0, 0] : Fin 4 → Nat) a + S1x1x64x64.size a ≤ S1x256x64x128.size a
  slices_S32768x64_o2240_0_S64x64 : S32768x64.Slices ![2240, 0] S64x64
  inb_S1x256x64x128_S1x1x64x64_0_17_0_64 : ∀ a, (![0, 17, 0, 64] : Fin 4 → Nat) a + S1x1x64x64.size a ≤ S1x256x64x128.size a
  slices_S32768x64_o2304_0_S64x64 : S32768x64.Slices ![2304, 0] S64x64
  inb_S1x256x64x128_S1x1x64x64_0_18_0_0 : ∀ a, (![0, 18, 0, 0] : Fin 4 → Nat) a + S1x1x64x64.size a ≤ S1x256x64x128.size a
  slices_S32768x64_o2368_0_S64x64 : S32768x64.Slices ![2368, 0] S64x64
  inb_S1x256x64x128_S1x1x64x64_0_18_0_64 : ∀ a, (![0, 18, 0, 64] : Fin 4 → Nat) a + S1x1x64x64.size a ≤ S1x256x64x128.size a
  slices_S32768x64_o2432_0_S64x64 : S32768x64.Slices ![2432, 0] S64x64
  inb_S1x256x64x128_S1x1x64x64_0_19_0_0 : ∀ a, (![0, 19, 0, 0] : Fin 4 → Nat) a + S1x1x64x64.size a ≤ S1x256x64x128.size a
  slices_S32768x64_o2496_0_S64x64 : S32768x64.Slices ![2496, 0] S64x64
  inb_S1x256x64x128_S1x1x64x64_0_19_0_64 : ∀ a, (![0, 19, 0, 64] : Fin 4 → Nat) a + S1x1x64x64.size a ≤ S1x256x64x128.size a
  slices_S32768x64_o2560_0_S64x64 : S32768x64.Slices ![2560, 0] S64x64
  inb_S1x256x64x128_S1x1x64x64_0_20_0_0 : ∀ a, (![0, 20, 0, 0] : Fin 4 → Nat) a + S1x1x64x64.size a ≤ S1x256x64x128.size a
  slices_S32768x64_o2624_0_S64x64 : S32768x64.Slices ![2624, 0] S64x64
  inb_S1x256x64x128_S1x1x64x64_0_20_0_64 : ∀ a, (![0, 20, 0, 64] : Fin 4 → Nat) a + S1x1x64x64.size a ≤ S1x256x64x128.size a
  slices_S32768x64_o2688_0_S64x64 : S32768x64.Slices ![2688, 0] S64x64
  inb_S1x256x64x128_S1x1x64x64_0_21_0_0 : ∀ a, (![0, 21, 0, 0] : Fin 4 → Nat) a + S1x1x64x64.size a ≤ S1x256x64x128.size a
  slices_S32768x64_o2752_0_S64x64 : S32768x64.Slices ![2752, 0] S64x64
  inb_S1x256x64x128_S1x1x64x64_0_21_0_64 : ∀ a, (![0, 21, 0, 64] : Fin 4 → Nat) a + S1x1x64x64.size a ≤ S1x256x64x128.size a
  slices_S32768x64_o2816_0_S64x64 : S32768x64.Slices ![2816, 0] S64x64
  inb_S1x256x64x128_S1x1x64x64_0_22_0_0 : ∀ a, (![0, 22, 0, 0] : Fin 4 → Nat) a + S1x1x64x64.size a ≤ S1x256x64x128.size a
  slices_S32768x64_o2880_0_S64x64 : S32768x64.Slices ![2880, 0] S64x64
  inb_S1x256x64x128_S1x1x64x64_0_22_0_64 : ∀ a, (![0, 22, 0, 64] : Fin 4 → Nat) a + S1x1x64x64.size a ≤ S1x256x64x128.size a
  slices_S32768x64_o2944_0_S64x64 : S32768x64.Slices ![2944, 0] S64x64
  inb_S1x256x64x128_S1x1x64x64_0_23_0_0 : ∀ a, (![0, 23, 0, 0] : Fin 4 → Nat) a + S1x1x64x64.size a ≤ S1x256x64x128.size a
  slices_S32768x64_o3008_0_S64x64 : S32768x64.Slices ![3008, 0] S64x64
  inb_S1x256x64x128_S1x1x64x64_0_23_0_64 : ∀ a, (![0, 23, 0, 64] : Fin 4 → Nat) a + S1x1x64x64.size a ≤ S1x256x64x128.size a
  slices_S32768x64_o3072_0_S64x64 : S32768x64.Slices ![3072, 0] S64x64
  inb_S1x256x64x128_S1x1x64x64_0_24_0_0 : ∀ a, (![0, 24, 0, 0] : Fin 4 → Nat) a + S1x1x64x64.size a ≤ S1x256x64x128.size a
  slices_S32768x64_o3136_0_S64x64 : S32768x64.Slices ![3136, 0] S64x64
  inb_S1x256x64x128_S1x1x64x64_0_24_0_64 : ∀ a, (![0, 24, 0, 64] : Fin 4 → Nat) a + S1x1x64x64.size a ≤ S1x256x64x128.size a
  slices_S32768x64_o3200_0_S64x64 : S32768x64.Slices ![3200, 0] S64x64
  inb_S1x256x64x128_S1x1x64x64_0_25_0_0 : ∀ a, (![0, 25, 0, 0] : Fin 4 → Nat) a + S1x1x64x64.size a ≤ S1x256x64x128.size a
  slices_S32768x64_o3264_0_S64x64 : S32768x64.Slices ![3264, 0] S64x64
  inb_S1x256x64x128_S1x1x64x64_0_25_0_64 : ∀ a, (![0, 25, 0, 64] : Fin 4 → Nat) a + S1x1x64x64.size a ≤ S1x256x64x128.size a
  slices_S32768x64_o3328_0_S64x64 : S32768x64.Slices ![3328, 0] S64x64
  inb_S1x256x64x128_S1x1x64x64_0_26_0_0 : ∀ a, (![0, 26, 0, 0] : Fin 4 → Nat) a + S1x1x64x64.size a ≤ S1x256x64x128.size a
  slices_S32768x64_o3392_0_S64x64 : S32768x64.Slices ![3392, 0] S64x64
  inb_S1x256x64x128_S1x1x64x64_0_26_0_64 : ∀ a, (![0, 26, 0, 64] : Fin 4 → Nat) a + S1x1x64x64.size a ≤ S1x256x64x128.size a
  slices_S32768x64_o3456_0_S64x64 : S32768x64.Slices ![3456, 0] S64x64
  inb_S1x256x64x128_S1x1x64x64_0_27_0_0 : ∀ a, (![0, 27, 0, 0] : Fin 4 → Nat) a + S1x1x64x64.size a ≤ S1x256x64x128.size a
  slices_S32768x64_o3520_0_S64x64 : S32768x64.Slices ![3520, 0] S64x64
  inb_S1x256x64x128_S1x1x64x64_0_27_0_64 : ∀ a, (![0, 27, 0, 64] : Fin 4 → Nat) a + S1x1x64x64.size a ≤ S1x256x64x128.size a
  slices_S32768x64_o3584_0_S64x64 : S32768x64.Slices ![3584, 0] S64x64
  inb_S1x256x64x128_S1x1x64x64_0_28_0_0 : ∀ a, (![0, 28, 0, 0] : Fin 4 → Nat) a + S1x1x64x64.size a ≤ S1x256x64x128.size a
  slices_S32768x64_o3648_0_S64x64 : S32768x64.Slices ![3648, 0] S64x64
  inb_S1x256x64x128_S1x1x64x64_0_28_0_64 : ∀ a, (![0, 28, 0, 64] : Fin 4 → Nat) a + S1x1x64x64.size a ≤ S1x256x64x128.size a
  slices_S32768x64_o3712_0_S64x64 : S32768x64.Slices ![3712, 0] S64x64
  inb_S1x256x64x128_S1x1x64x64_0_29_0_0 : ∀ a, (![0, 29, 0, 0] : Fin 4 → Nat) a + S1x1x64x64.size a ≤ S1x256x64x128.size a
  slices_S32768x64_o3776_0_S64x64 : S32768x64.Slices ![3776, 0] S64x64
  inb_S1x256x64x128_S1x1x64x64_0_29_0_64 : ∀ a, (![0, 29, 0, 64] : Fin 4 → Nat) a + S1x1x64x64.size a ≤ S1x256x64x128.size a
  slices_S32768x64_o3840_0_S64x64 : S32768x64.Slices ![3840, 0] S64x64
  inb_S1x256x64x128_S1x1x64x64_0_30_0_0 : ∀ a, (![0, 30, 0, 0] : Fin 4 → Nat) a + S1x1x64x64.size a ≤ S1x256x64x128.size a
  slices_S32768x64_o3904_0_S64x64 : S32768x64.Slices ![3904, 0] S64x64
  inb_S1x256x64x128_S1x1x64x64_0_30_0_64 : ∀ a, (![0, 30, 0, 64] : Fin 4 → Nat) a + S1x1x64x64.size a ≤ S1x256x64x128.size a
  slices_S32768x64_o3968_0_S64x64 : S32768x64.Slices ![3968, 0] S64x64
  inb_S1x256x64x128_S1x1x64x64_0_31_0_0 : ∀ a, (![0, 31, 0, 0] : Fin 4 → Nat) a + S1x1x64x64.size a ≤ S1x256x64x128.size a
  slices_S32768x64_o4032_0_S64x64 : S32768x64.Slices ![4032, 0] S64x64
  inb_S1x256x64x128_S1x1x64x64_0_31_0_64 : ∀ a, (![0, 31, 0, 64] : Fin 4 → Nat) a + S1x1x64x64.size a ≤ S1x256x64x128.size a
  slices_S32768x64_o4096_0_S64x64 : S32768x64.Slices ![4096, 0] S64x64
  inb_S1x256x64x128_S1x1x64x64_0_32_0_0 : ∀ a, (![0, 32, 0, 0] : Fin 4 → Nat) a + S1x1x64x64.size a ≤ S1x256x64x128.size a
  slices_S32768x64_o4160_0_S64x64 : S32768x64.Slices ![4160, 0] S64x64
  inb_S1x256x64x128_S1x1x64x64_0_32_0_64 : ∀ a, (![0, 32, 0, 64] : Fin 4 → Nat) a + S1x1x64x64.size a ≤ S1x256x64x128.size a
  slices_S32768x64_o4224_0_S64x64 : S32768x64.Slices ![4224, 0] S64x64
  inb_S1x256x64x128_S1x1x64x64_0_33_0_0 : ∀ a, (![0, 33, 0, 0] : Fin 4 → Nat) a + S1x1x64x64.size a ≤ S1x256x64x128.size a
  slices_S32768x64_o4288_0_S64x64 : S32768x64.Slices ![4288, 0] S64x64
  inb_S1x256x64x128_S1x1x64x64_0_33_0_64 : ∀ a, (![0, 33, 0, 64] : Fin 4 → Nat) a + S1x1x64x64.size a ≤ S1x256x64x128.size a
  slices_S32768x64_o4352_0_S64x64 : S32768x64.Slices ![4352, 0] S64x64
  inb_S1x256x64x128_S1x1x64x64_0_34_0_0 : ∀ a, (![0, 34, 0, 0] : Fin 4 → Nat) a + S1x1x64x64.size a ≤ S1x256x64x128.size a
  slices_S32768x64_o4416_0_S64x64 : S32768x64.Slices ![4416, 0] S64x64
  inb_S1x256x64x128_S1x1x64x64_0_34_0_64 : ∀ a, (![0, 34, 0, 64] : Fin 4 → Nat) a + S1x1x64x64.size a ≤ S1x256x64x128.size a
  slices_S32768x64_o4480_0_S64x64 : S32768x64.Slices ![4480, 0] S64x64
  inb_S1x256x64x128_S1x1x64x64_0_35_0_0 : ∀ a, (![0, 35, 0, 0] : Fin 4 → Nat) a + S1x1x64x64.size a ≤ S1x256x64x128.size a
  slices_S32768x64_o4544_0_S64x64 : S32768x64.Slices ![4544, 0] S64x64
  inb_S1x256x64x128_S1x1x64x64_0_35_0_64 : ∀ a, (![0, 35, 0, 64] : Fin 4 → Nat) a + S1x1x64x64.size a ≤ S1x256x64x128.size a
  slices_S32768x64_o4608_0_S64x64 : S32768x64.Slices ![4608, 0] S64x64
  inb_S1x256x64x128_S1x1x64x64_0_36_0_0 : ∀ a, (![0, 36, 0, 0] : Fin 4 → Nat) a + S1x1x64x64.size a ≤ S1x256x64x128.size a
  slices_S32768x64_o4672_0_S64x64 : S32768x64.Slices ![4672, 0] S64x64
  inb_S1x256x64x128_S1x1x64x64_0_36_0_64 : ∀ a, (![0, 36, 0, 64] : Fin 4 → Nat) a + S1x1x64x64.size a ≤ S1x256x64x128.size a
  slices_S32768x64_o4736_0_S64x64 : S32768x64.Slices ![4736, 0] S64x64
  inb_S1x256x64x128_S1x1x64x64_0_37_0_0 : ∀ a, (![0, 37, 0, 0] : Fin 4 → Nat) a + S1x1x64x64.size a ≤ S1x256x64x128.size a
  slices_S32768x64_o4800_0_S64x64 : S32768x64.Slices ![4800, 0] S64x64
  inb_S1x256x64x128_S1x1x64x64_0_37_0_64 : ∀ a, (![0, 37, 0, 64] : Fin 4 → Nat) a + S1x1x64x64.size a ≤ S1x256x64x128.size a
  slices_S32768x64_o4864_0_S64x64 : S32768x64.Slices ![4864, 0] S64x64
  inb_S1x256x64x128_S1x1x64x64_0_38_0_0 : ∀ a, (![0, 38, 0, 0] : Fin 4 → Nat) a + S1x1x64x64.size a ≤ S1x256x64x128.size a
  slices_S32768x64_o4928_0_S64x64 : S32768x64.Slices ![4928, 0] S64x64
  inb_S1x256x64x128_S1x1x64x64_0_38_0_64 : ∀ a, (![0, 38, 0, 64] : Fin 4 → Nat) a + S1x1x64x64.size a ≤ S1x256x64x128.size a
  slices_S32768x64_o4992_0_S64x64 : S32768x64.Slices ![4992, 0] S64x64
  inb_S1x256x64x128_S1x1x64x64_0_39_0_0 : ∀ a, (![0, 39, 0, 0] : Fin 4 → Nat) a + S1x1x64x64.size a ≤ S1x256x64x128.size a
  slices_S32768x64_o5056_0_S64x64 : S32768x64.Slices ![5056, 0] S64x64
  inb_S1x256x64x128_S1x1x64x64_0_39_0_64 : ∀ a, (![0, 39, 0, 64] : Fin 4 → Nat) a + S1x1x64x64.size a ≤ S1x256x64x128.size a
  slices_S32768x64_o5120_0_S64x64 : S32768x64.Slices ![5120, 0] S64x64
  inb_S1x256x64x128_S1x1x64x64_0_40_0_0 : ∀ a, (![0, 40, 0, 0] : Fin 4 → Nat) a + S1x1x64x64.size a ≤ S1x256x64x128.size a
  slices_S32768x64_o5184_0_S64x64 : S32768x64.Slices ![5184, 0] S64x64
  inb_S1x256x64x128_S1x1x64x64_0_40_0_64 : ∀ a, (![0, 40, 0, 64] : Fin 4 → Nat) a + S1x1x64x64.size a ≤ S1x256x64x128.size a
  slices_S32768x64_o5248_0_S64x64 : S32768x64.Slices ![5248, 0] S64x64
  inb_S1x256x64x128_S1x1x64x64_0_41_0_0 : ∀ a, (![0, 41, 0, 0] : Fin 4 → Nat) a + S1x1x64x64.size a ≤ S1x256x64x128.size a
  slices_S32768x64_o5312_0_S64x64 : S32768x64.Slices ![5312, 0] S64x64
  inb_S1x256x64x128_S1x1x64x64_0_41_0_64 : ∀ a, (![0, 41, 0, 64] : Fin 4 → Nat) a + S1x1x64x64.size a ≤ S1x256x64x128.size a
  slices_S32768x64_o5376_0_S64x64 : S32768x64.Slices ![5376, 0] S64x64
  inb_S1x256x64x128_S1x1x64x64_0_42_0_0 : ∀ a, (![0, 42, 0, 0] : Fin 4 → Nat) a + S1x1x64x64.size a ≤ S1x256x64x128.size a
  slices_S32768x64_o5440_0_S64x64 : S32768x64.Slices ![5440, 0] S64x64
  inb_S1x256x64x128_S1x1x64x64_0_42_0_64 : ∀ a, (![0, 42, 0, 64] : Fin 4 → Nat) a + S1x1x64x64.size a ≤ S1x256x64x128.size a
  slices_S32768x64_o5504_0_S64x64 : S32768x64.Slices ![5504, 0] S64x64
  inb_S1x256x64x128_S1x1x64x64_0_43_0_0 : ∀ a, (![0, 43, 0, 0] : Fin 4 → Nat) a + S1x1x64x64.size a ≤ S1x256x64x128.size a
  slices_S32768x64_o5568_0_S64x64 : S32768x64.Slices ![5568, 0] S64x64
  inb_S1x256x64x128_S1x1x64x64_0_43_0_64 : ∀ a, (![0, 43, 0, 64] : Fin 4 → Nat) a + S1x1x64x64.size a ≤ S1x256x64x128.size a
  slices_S32768x64_o5632_0_S64x64 : S32768x64.Slices ![5632, 0] S64x64
  inb_S1x256x64x128_S1x1x64x64_0_44_0_0 : ∀ a, (![0, 44, 0, 0] : Fin 4 → Nat) a + S1x1x64x64.size a ≤ S1x256x64x128.size a
  slices_S32768x64_o5696_0_S64x64 : S32768x64.Slices ![5696, 0] S64x64
  inb_S1x256x64x128_S1x1x64x64_0_44_0_64 : ∀ a, (![0, 44, 0, 64] : Fin 4 → Nat) a + S1x1x64x64.size a ≤ S1x256x64x128.size a
  slices_S32768x64_o5760_0_S64x64 : S32768x64.Slices ![5760, 0] S64x64
  inb_S1x256x64x128_S1x1x64x64_0_45_0_0 : ∀ a, (![0, 45, 0, 0] : Fin 4 → Nat) a + S1x1x64x64.size a ≤ S1x256x64x128.size a
  slices_S32768x64_o5824_0_S64x64 : S32768x64.Slices ![5824, 0] S64x64
  inb_S1x256x64x128_S1x1x64x64_0_45_0_64 : ∀ a, (![0, 45, 0, 64] : Fin 4 → Nat) a + S1x1x64x64.size a ≤ S1x256x64x128.size a
  slices_S32768x64_o5888_0_S64x64 : S32768x64.Slices ![5888, 0] S64x64
  inb_S1x256x64x128_S1x1x64x64_0_46_0_0 : ∀ a, (![0, 46, 0, 0] : Fin 4 → Nat) a + S1x1x64x64.size a ≤ S1x256x64x128.size a
  slices_S32768x64_o5952_0_S64x64 : S32768x64.Slices ![5952, 0] S64x64
  inb_S1x256x64x128_S1x1x64x64_0_46_0_64 : ∀ a, (![0, 46, 0, 64] : Fin 4 → Nat) a + S1x1x64x64.size a ≤ S1x256x64x128.size a
  slices_S32768x64_o6016_0_S64x64 : S32768x64.Slices ![6016, 0] S64x64
  inb_S1x256x64x128_S1x1x64x64_0_47_0_0 : ∀ a, (![0, 47, 0, 0] : Fin 4 → Nat) a + S1x1x64x64.size a ≤ S1x256x64x128.size a
  slices_S32768x64_o6080_0_S64x64 : S32768x64.Slices ![6080, 0] S64x64
  inb_S1x256x64x128_S1x1x64x64_0_47_0_64 : ∀ a, (![0, 47, 0, 64] : Fin 4 → Nat) a + S1x1x64x64.size a ≤ S1x256x64x128.size a
  slices_S32768x64_o6144_0_S64x64 : S32768x64.Slices ![6144, 0] S64x64
  inb_S1x256x64x128_S1x1x64x64_0_48_0_0 : ∀ a, (![0, 48, 0, 0] : Fin 4 → Nat) a + S1x1x64x64.size a ≤ S1x256x64x128.size a
  slices_S32768x64_o6208_0_S64x64 : S32768x64.Slices ![6208, 0] S64x64
  inb_S1x256x64x128_S1x1x64x64_0_48_0_64 : ∀ a, (![0, 48, 0, 64] : Fin 4 → Nat) a + S1x1x64x64.size a ≤ S1x256x64x128.size a
  slices_S32768x64_o6272_0_S64x64 : S32768x64.Slices ![6272, 0] S64x64
  inb_S1x256x64x128_S1x1x64x64_0_49_0_0 : ∀ a, (![0, 49, 0, 0] : Fin 4 → Nat) a + S1x1x64x64.size a ≤ S1x256x64x128.size a
  slices_S32768x64_o6336_0_S64x64 : S32768x64.Slices ![6336, 0] S64x64
  inb_S1x256x64x128_S1x1x64x64_0_49_0_64 : ∀ a, (![0, 49, 0, 64] : Fin 4 → Nat) a + S1x1x64x64.size a ≤ S1x256x64x128.size a
  slices_S32768x64_o6400_0_S64x64 : S32768x64.Slices ![6400, 0] S64x64
  inb_S1x256x64x128_S1x1x64x64_0_50_0_0 : ∀ a, (![0, 50, 0, 0] : Fin 4 → Nat) a + S1x1x64x64.size a ≤ S1x256x64x128.size a
  slices_S32768x64_o6464_0_S64x64 : S32768x64.Slices ![6464, 0] S64x64
  inb_S1x256x64x128_S1x1x64x64_0_50_0_64 : ∀ a, (![0, 50, 0, 64] : Fin 4 → Nat) a + S1x1x64x64.size a ≤ S1x256x64x128.size a
  slices_S32768x64_o6528_0_S64x64 : S32768x64.Slices ![6528, 0] S64x64
  inb_S1x256x64x128_S1x1x64x64_0_51_0_0 : ∀ a, (![0, 51, 0, 0] : Fin 4 → Nat) a + S1x1x64x64.size a ≤ S1x256x64x128.size a
  slices_S32768x64_o6592_0_S64x64 : S32768x64.Slices ![6592, 0] S64x64
  inb_S1x256x64x128_S1x1x64x64_0_51_0_64 : ∀ a, (![0, 51, 0, 64] : Fin 4 → Nat) a + S1x1x64x64.size a ≤ S1x256x64x128.size a
  slices_S32768x64_o6656_0_S64x64 : S32768x64.Slices ![6656, 0] S64x64
  inb_S1x256x64x128_S1x1x64x64_0_52_0_0 : ∀ a, (![0, 52, 0, 0] : Fin 4 → Nat) a + S1x1x64x64.size a ≤ S1x256x64x128.size a
  slices_S32768x64_o6720_0_S64x64 : S32768x64.Slices ![6720, 0] S64x64
  inb_S1x256x64x128_S1x1x64x64_0_52_0_64 : ∀ a, (![0, 52, 0, 64] : Fin 4 → Nat) a + S1x1x64x64.size a ≤ S1x256x64x128.size a
  slices_S32768x64_o6784_0_S64x64 : S32768x64.Slices ![6784, 0] S64x64
  inb_S1x256x64x128_S1x1x64x64_0_53_0_0 : ∀ a, (![0, 53, 0, 0] : Fin 4 → Nat) a + S1x1x64x64.size a ≤ S1x256x64x128.size a
  slices_S32768x64_o6848_0_S64x64 : S32768x64.Slices ![6848, 0] S64x64
  inb_S1x256x64x128_S1x1x64x64_0_53_0_64 : ∀ a, (![0, 53, 0, 64] : Fin 4 → Nat) a + S1x1x64x64.size a ≤ S1x256x64x128.size a
  slices_S32768x64_o6912_0_S64x64 : S32768x64.Slices ![6912, 0] S64x64
  inb_S1x256x64x128_S1x1x64x64_0_54_0_0 : ∀ a, (![0, 54, 0, 0] : Fin 4 → Nat) a + S1x1x64x64.size a ≤ S1x256x64x128.size a
  slices_S32768x64_o6976_0_S64x64 : S32768x64.Slices ![6976, 0] S64x64
  inb_S1x256x64x128_S1x1x64x64_0_54_0_64 : ∀ a, (![0, 54, 0, 64] : Fin 4 → Nat) a + S1x1x64x64.size a ≤ S1x256x64x128.size a
  slices_S32768x64_o7040_0_S64x64 : S32768x64.Slices ![7040, 0] S64x64
  inb_S1x256x64x128_S1x1x64x64_0_55_0_0 : ∀ a, (![0, 55, 0, 0] : Fin 4 → Nat) a + S1x1x64x64.size a ≤ S1x256x64x128.size a
  slices_S32768x64_o7104_0_S64x64 : S32768x64.Slices ![7104, 0] S64x64
  inb_S1x256x64x128_S1x1x64x64_0_55_0_64 : ∀ a, (![0, 55, 0, 64] : Fin 4 → Nat) a + S1x1x64x64.size a ≤ S1x256x64x128.size a
  slices_S32768x64_o7168_0_S64x64 : S32768x64.Slices ![7168, 0] S64x64
  inb_S1x256x64x128_S1x1x64x64_0_56_0_0 : ∀ a, (![0, 56, 0, 0] : Fin 4 → Nat) a + S1x1x64x64.size a ≤ S1x256x64x128.size a
  slices_S32768x64_o7232_0_S64x64 : S32768x64.Slices ![7232, 0] S64x64
  inb_S1x256x64x128_S1x1x64x64_0_56_0_64 : ∀ a, (![0, 56, 0, 64] : Fin 4 → Nat) a + S1x1x64x64.size a ≤ S1x256x64x128.size a
  slices_S32768x64_o7296_0_S64x64 : S32768x64.Slices ![7296, 0] S64x64
  inb_S1x256x64x128_S1x1x64x64_0_57_0_0 : ∀ a, (![0, 57, 0, 0] : Fin 4 → Nat) a + S1x1x64x64.size a ≤ S1x256x64x128.size a
  slices_S32768x64_o7360_0_S64x64 : S32768x64.Slices ![7360, 0] S64x64
  inb_S1x256x64x128_S1x1x64x64_0_57_0_64 : ∀ a, (![0, 57, 0, 64] : Fin 4 → Nat) a + S1x1x64x64.size a ≤ S1x256x64x128.size a
  slices_S32768x64_o7424_0_S64x64 : S32768x64.Slices ![7424, 0] S64x64
  inb_S1x256x64x128_S1x1x64x64_0_58_0_0 : ∀ a, (![0, 58, 0, 0] : Fin 4 → Nat) a + S1x1x64x64.size a ≤ S1x256x64x128.size a
  slices_S32768x64_o7488_0_S64x64 : S32768x64.Slices ![7488, 0] S64x64
  inb_S1x256x64x128_S1x1x64x64_0_58_0_64 : ∀ a, (![0, 58, 0, 64] : Fin 4 → Nat) a + S1x1x64x64.size a ≤ S1x256x64x128.size a
  slices_S32768x64_o7552_0_S64x64 : S32768x64.Slices ![7552, 0] S64x64
  inb_S1x256x64x128_S1x1x64x64_0_59_0_0 : ∀ a, (![0, 59, 0, 0] : Fin 4 → Nat) a + S1x1x64x64.size a ≤ S1x256x64x128.size a
  slices_S32768x64_o7616_0_S64x64 : S32768x64.Slices ![7616, 0] S64x64
  inb_S1x256x64x128_S1x1x64x64_0_59_0_64 : ∀ a, (![0, 59, 0, 64] : Fin 4 → Nat) a + S1x1x64x64.size a ≤ S1x256x64x128.size a
  slices_S32768x64_o7680_0_S64x64 : S32768x64.Slices ![7680, 0] S64x64
  inb_S1x256x64x128_S1x1x64x64_0_60_0_0 : ∀ a, (![0, 60, 0, 0] : Fin 4 → Nat) a + S1x1x64x64.size a ≤ S1x256x64x128.size a
  slices_S32768x64_o7744_0_S64x64 : S32768x64.Slices ![7744, 0] S64x64
  inb_S1x256x64x128_S1x1x64x64_0_60_0_64 : ∀ a, (![0, 60, 0, 64] : Fin 4 → Nat) a + S1x1x64x64.size a ≤ S1x256x64x128.size a
  slices_S32768x64_o7808_0_S64x64 : S32768x64.Slices ![7808, 0] S64x64
  inb_S1x256x64x128_S1x1x64x64_0_61_0_0 : ∀ a, (![0, 61, 0, 0] : Fin 4 → Nat) a + S1x1x64x64.size a ≤ S1x256x64x128.size a
  slices_S32768x64_o7872_0_S64x64 : S32768x64.Slices ![7872, 0] S64x64
  inb_S1x256x64x128_S1x1x64x64_0_61_0_64 : ∀ a, (![0, 61, 0, 64] : Fin 4 → Nat) a + S1x1x64x64.size a ≤ S1x256x64x128.size a
  slices_S32768x64_o7936_0_S64x64 : S32768x64.Slices ![7936, 0] S64x64
  inb_S1x256x64x128_S1x1x64x64_0_62_0_0 : ∀ a, (![0, 62, 0, 0] : Fin 4 → Nat) a + S1x1x64x64.size a ≤ S1x256x64x128.size a
  slices_S32768x64_o8000_0_S64x64 : S32768x64.Slices ![8000, 0] S64x64
  inb_S1x256x64x128_S1x1x64x64_0_62_0_64 : ∀ a, (![0, 62, 0, 64] : Fin 4 → Nat) a + S1x1x64x64.size a ≤ S1x256x64x128.size a
  slices_S32768x64_o8064_0_S64x64 : S32768x64.Slices ![8064, 0] S64x64
  inb_S1x256x64x128_S1x1x64x64_0_63_0_0 : ∀ a, (![0, 63, 0, 0] : Fin 4 → Nat) a + S1x1x64x64.size a ≤ S1x256x64x128.size a
  slices_S32768x64_o8128_0_S64x64 : S32768x64.Slices ![8128, 0] S64x64
  inb_S1x256x64x128_S1x1x64x64_0_63_0_64 : ∀ a, (![0, 63, 0, 64] : Fin 4 → Nat) a + S1x1x64x64.size a ≤ S1x256x64x128.size a
  slices_S32768x64_o8192_0_S64x64 : S32768x64.Slices ![8192, 0] S64x64
  inb_S1x256x64x128_S1x1x64x64_0_64_0_0 : ∀ a, (![0, 64, 0, 0] : Fin 4 → Nat) a + S1x1x64x64.size a ≤ S1x256x64x128.size a
  slices_S32768x64_o8256_0_S64x64 : S32768x64.Slices ![8256, 0] S64x64
  inb_S1x256x64x128_S1x1x64x64_0_64_0_64 : ∀ a, (![0, 64, 0, 64] : Fin 4 → Nat) a + S1x1x64x64.size a ≤ S1x256x64x128.size a
  slices_S32768x64_o8320_0_S64x64 : S32768x64.Slices ![8320, 0] S64x64
  inb_S1x256x64x128_S1x1x64x64_0_65_0_0 : ∀ a, (![0, 65, 0, 0] : Fin 4 → Nat) a + S1x1x64x64.size a ≤ S1x256x64x128.size a
  slices_S32768x64_o8384_0_S64x64 : S32768x64.Slices ![8384, 0] S64x64
  inb_S1x256x64x128_S1x1x64x64_0_65_0_64 : ∀ a, (![0, 65, 0, 64] : Fin 4 → Nat) a + S1x1x64x64.size a ≤ S1x256x64x128.size a
  slices_S32768x64_o8448_0_S64x64 : S32768x64.Slices ![8448, 0] S64x64
  inb_S1x256x64x128_S1x1x64x64_0_66_0_0 : ∀ a, (![0, 66, 0, 0] : Fin 4 → Nat) a + S1x1x64x64.size a ≤ S1x256x64x128.size a
  slices_S32768x64_o8512_0_S64x64 : S32768x64.Slices ![8512, 0] S64x64
  inb_S1x256x64x128_S1x1x64x64_0_66_0_64 : ∀ a, (![0, 66, 0, 64] : Fin 4 → Nat) a + S1x1x64x64.size a ≤ S1x256x64x128.size a
  slices_S32768x64_o8576_0_S64x64 : S32768x64.Slices ![8576, 0] S64x64
  inb_S1x256x64x128_S1x1x64x64_0_67_0_0 : ∀ a, (![0, 67, 0, 0] : Fin 4 → Nat) a + S1x1x64x64.size a ≤ S1x256x64x128.size a
  slices_S32768x64_o8640_0_S64x64 : S32768x64.Slices ![8640, 0] S64x64
  inb_S1x256x64x128_S1x1x64x64_0_67_0_64 : ∀ a, (![0, 67, 0, 64] : Fin 4 → Nat) a + S1x1x64x64.size a ≤ S1x256x64x128.size a
  slices_S32768x64_o8704_0_S64x64 : S32768x64.Slices ![8704, 0] S64x64
  inb_S1x256x64x128_S1x1x64x64_0_68_0_0 : ∀ a, (![0, 68, 0, 0] : Fin 4 → Nat) a + S1x1x64x64.size a ≤ S1x256x64x128.size a
  slices_S32768x64_o8768_0_S64x64 : S32768x64.Slices ![8768, 0] S64x64
  inb_S1x256x64x128_S1x1x64x64_0_68_0_64 : ∀ a, (![0, 68, 0, 64] : Fin 4 → Nat) a + S1x1x64x64.size a ≤ S1x256x64x128.size a
  slices_S32768x64_o8832_0_S64x64 : S32768x64.Slices ![8832, 0] S64x64
  inb_S1x256x64x128_S1x1x64x64_0_69_0_0 : ∀ a, (![0, 69, 0, 0] : Fin 4 → Nat) a + S1x1x64x64.size a ≤ S1x256x64x128.size a
  slices_S32768x64_o8896_0_S64x64 : S32768x64.Slices ![8896, 0] S64x64
  inb_S1x256x64x128_S1x1x64x64_0_69_0_64 : ∀ a, (![0, 69, 0, 64] : Fin 4 → Nat) a + S1x1x64x64.size a ≤ S1x256x64x128.size a
  slices_S32768x64_o8960_0_S64x64 : S32768x64.Slices ![8960, 0] S64x64
  inb_S1x256x64x128_S1x1x64x64_0_70_0_0 : ∀ a, (![0, 70, 0, 0] : Fin 4 → Nat) a + S1x1x64x64.size a ≤ S1x256x64x128.size a
  slices_S32768x64_o9024_0_S64x64 : S32768x64.Slices ![9024, 0] S64x64
  inb_S1x256x64x128_S1x1x64x64_0_70_0_64 : ∀ a, (![0, 70, 0, 64] : Fin 4 → Nat) a + S1x1x64x64.size a ≤ S1x256x64x128.size a
  slices_S32768x64_o9088_0_S64x64 : S32768x64.Slices ![9088, 0] S64x64
  inb_S1x256x64x128_S1x1x64x64_0_71_0_0 : ∀ a, (![0, 71, 0, 0] : Fin 4 → Nat) a + S1x1x64x64.size a ≤ S1x256x64x128.size a
  slices_S32768x64_o9152_0_S64x64 : S32768x64.Slices ![9152, 0] S64x64
  inb_S1x256x64x128_S1x1x64x64_0_71_0_64 : ∀ a, (![0, 71, 0, 64] : Fin 4 → Nat) a + S1x1x64x64.size a ≤ S1x256x64x128.size a
  slices_S32768x64_o9216_0_S64x64 : S32768x64.Slices ![9216, 0] S64x64
  inb_S1x256x64x128_S1x1x64x64_0_72_0_0 : ∀ a, (![0, 72, 0, 0] : Fin 4 → Nat) a + S1x1x64x64.size a ≤ S1x256x64x128.size a
  slices_S32768x64_o9280_0_S64x64 : S32768x64.Slices ![9280, 0] S64x64
  inb_S1x256x64x128_S1x1x64x64_0_72_0_64 : ∀ a, (![0, 72, 0, 64] : Fin 4 → Nat) a + S1x1x64x64.size a ≤ S1x256x64x128.size a
  slices_S32768x64_o9344_0_S64x64 : S32768x64.Slices ![9344, 0] S64x64
  inb_S1x256x64x128_S1x1x64x64_0_73_0_0 : ∀ a, (![0, 73, 0, 0] : Fin 4 → Nat) a + S1x1x64x64.size a ≤ S1x256x64x128.size a
  slices_S32768x64_o9408_0_S64x64 : S32768x64.Slices ![9408, 0] S64x64
  inb_S1x256x64x128_S1x1x64x64_0_73_0_64 : ∀ a, (![0, 73, 0, 64] : Fin 4 → Nat) a + S1x1x64x64.size a ≤ S1x256x64x128.size a
  slices_S32768x64_o9472_0_S64x64 : S32768x64.Slices ![9472, 0] S64x64
  inb_S1x256x64x128_S1x1x64x64_0_74_0_0 : ∀ a, (![0, 74, 0, 0] : Fin 4 → Nat) a + S1x1x64x64.size a ≤ S1x256x64x128.size a
  slices_S32768x64_o9536_0_S64x64 : S32768x64.Slices ![9536, 0] S64x64
  inb_S1x256x64x128_S1x1x64x64_0_74_0_64 : ∀ a, (![0, 74, 0, 64] : Fin 4 → Nat) a + S1x1x64x64.size a ≤ S1x256x64x128.size a
  slices_S32768x64_o9600_0_S64x64 : S32768x64.Slices ![9600, 0] S64x64
  inb_S1x256x64x128_S1x1x64x64_0_75_0_0 : ∀ a, (![0, 75, 0, 0] : Fin 4 → Nat) a + S1x1x64x64.size a ≤ S1x256x64x128.size a
  slices_S32768x64_o9664_0_S64x64 : S32768x64.Slices ![9664, 0] S64x64
  inb_S1x256x64x128_S1x1x64x64_0_75_0_64 : ∀ a, (![0, 75, 0, 64] : Fin 4 → Nat) a + S1x1x64x64.size a ≤ S1x256x64x128.size a
  slices_S32768x64_o9728_0_S64x64 : S32768x64.Slices ![9728, 0] S64x64
  inb_S1x256x64x128_S1x1x64x64_0_76_0_0 : ∀ a, (![0, 76, 0, 0] : Fin 4 → Nat) a + S1x1x64x64.size a ≤ S1x256x64x128.size a
  slices_S32768x64_o9792_0_S64x64 : S32768x64.Slices ![9792, 0] S64x64
  inb_S1x256x64x128_S1x1x64x64_0_76_0_64 : ∀ a, (![0, 76, 0, 64] : Fin 4 → Nat) a + S1x1x64x64.size a ≤ S1x256x64x128.size a
  slices_S32768x64_o9856_0_S64x64 : S32768x64.Slices ![9856, 0] S64x64
  inb_S1x256x64x128_S1x1x64x64_0_77_0_0 : ∀ a, (![0, 77, 0, 0] : Fin 4 → Nat) a + S1x1x64x64.size a ≤ S1x256x64x128.size a
  slices_S32768x64_o9920_0_S64x64 : S32768x64.Slices ![9920, 0] S64x64
  inb_S1x256x64x128_S1x1x64x64_0_77_0_64 : ∀ a, (![0, 77, 0, 64] : Fin 4 → Nat) a + S1x1x64x64.size a ≤ S1x256x64x128.size a
  slices_S32768x64_o9984_0_S64x64 : S32768x64.Slices ![9984, 0] S64x64
  inb_S1x256x64x128_S1x1x64x64_0_78_0_0 : ∀ a, (![0, 78, 0, 0] : Fin 4 → Nat) a + S1x1x64x64.size a ≤ S1x256x64x128.size a
  slices_S32768x64_o10048_0_S64x64 : S32768x64.Slices ![10048, 0] S64x64
  inb_S1x256x64x128_S1x1x64x64_0_78_0_64 : ∀ a, (![0, 78, 0, 64] : Fin 4 → Nat) a + S1x1x64x64.size a ≤ S1x256x64x128.size a
  slices_S32768x64_o10112_0_S64x64 : S32768x64.Slices ![10112, 0] S64x64
  inb_S1x256x64x128_S1x1x64x64_0_79_0_0 : ∀ a, (![0, 79, 0, 0] : Fin 4 → Nat) a + S1x1x64x64.size a ≤ S1x256x64x128.size a
  slices_S32768x64_o10176_0_S64x64 : S32768x64.Slices ![10176, 0] S64x64
  inb_S1x256x64x128_S1x1x64x64_0_79_0_64 : ∀ a, (![0, 79, 0, 64] : Fin 4 → Nat) a + S1x1x64x64.size a ≤ S1x256x64x128.size a
  slices_S32768x64_o10240_0_S64x64 : S32768x64.Slices ![10240, 0] S64x64
  inb_S1x256x64x128_S1x1x64x64_0_80_0_0 : ∀ a, (![0, 80, 0, 0] : Fin 4 → Nat) a + S1x1x64x64.size a ≤ S1x256x64x128.size a
  slices_S32768x64_o10304_0_S64x64 : S32768x64.Slices ![10304, 0] S64x64
  inb_S1x256x64x128_S1x1x64x64_0_80_0_64 : ∀ a, (![0, 80, 0, 64] : Fin 4 → Nat) a + S1x1x64x64.size a ≤ S1x256x64x128.size a
  slices_S32768x64_o10368_0_S64x64 : S32768x64.Slices ![10368, 0] S64x64
  inb_S1x256x64x128_S1x1x64x64_0_81_0_0 : ∀ a, (![0, 81, 0, 0] : Fin 4 → Nat) a + S1x1x64x64.size a ≤ S1x256x64x128.size a
  slices_S32768x64_o10432_0_S64x64 : S32768x64.Slices ![10432, 0] S64x64
  inb_S1x256x64x128_S1x1x64x64_0_81_0_64 : ∀ a, (![0, 81, 0, 64] : Fin 4 → Nat) a + S1x1x64x64.size a ≤ S1x256x64x128.size a
  slices_S32768x64_o10496_0_S64x64 : S32768x64.Slices ![10496, 0] S64x64
  inb_S1x256x64x128_S1x1x64x64_0_82_0_0 : ∀ a, (![0, 82, 0, 0] : Fin 4 → Nat) a + S1x1x64x64.size a ≤ S1x256x64x128.size a
  slices_S32768x64_o10560_0_S64x64 : S32768x64.Slices ![10560, 0] S64x64
  inb_S1x256x64x128_S1x1x64x64_0_82_0_64 : ∀ a, (![0, 82, 0, 64] : Fin 4 → Nat) a + S1x1x64x64.size a ≤ S1x256x64x128.size a
  slices_S32768x64_o10624_0_S64x64 : S32768x64.Slices ![10624, 0] S64x64
  inb_S1x256x64x128_S1x1x64x64_0_83_0_0 : ∀ a, (![0, 83, 0, 0] : Fin 4 → Nat) a + S1x1x64x64.size a ≤ S1x256x64x128.size a
  slices_S32768x64_o10688_0_S64x64 : S32768x64.Slices ![10688, 0] S64x64
  inb_S1x256x64x128_S1x1x64x64_0_83_0_64 : ∀ a, (![0, 83, 0, 64] : Fin 4 → Nat) a + S1x1x64x64.size a ≤ S1x256x64x128.size a
  slices_S32768x64_o10752_0_S64x64 : S32768x64.Slices ![10752, 0] S64x64
  inb_S1x256x64x128_S1x1x64x64_0_84_0_0 : ∀ a, (![0, 84, 0, 0] : Fin 4 → Nat) a + S1x1x64x64.size a ≤ S1x256x64x128.size a
  slices_S32768x64_o10816_0_S64x64 : S32768x64.Slices ![10816, 0] S64x64
  inb_S1x256x64x128_S1x1x64x64_0_84_0_64 : ∀ a, (![0, 84, 0, 64] : Fin 4 → Nat) a + S1x1x64x64.size a ≤ S1x256x64x128.size a
  slices_S32768x64_o10880_0_S64x64 : S32768x64.Slices ![10880, 0] S64x64
  inb_S1x256x64x128_S1x1x64x64_0_85_0_0 : ∀ a, (![0, 85, 0, 0] : Fin 4 → Nat) a + S1x1x64x64.size a ≤ S1x256x64x128.size a
  slices_S32768x64_o10944_0_S64x64 : S32768x64.Slices ![10944, 0] S64x64
  inb_S1x256x64x128_S1x1x64x64_0_85_0_64 : ∀ a, (![0, 85, 0, 64] : Fin 4 → Nat) a + S1x1x64x64.size a ≤ S1x256x64x128.size a
  slices_S32768x64_o11008_0_S64x64 : S32768x64.Slices ![11008, 0] S64x64
  inb_S1x256x64x128_S1x1x64x64_0_86_0_0 : ∀ a, (![0, 86, 0, 0] : Fin 4 → Nat) a + S1x1x64x64.size a ≤ S1x256x64x128.size a
  slices_S32768x64_o11072_0_S64x64 : S32768x64.Slices ![11072, 0] S64x64
  inb_S1x256x64x128_S1x1x64x64_0_86_0_64 : ∀ a, (![0, 86, 0, 64] : Fin 4 → Nat) a + S1x1x64x64.size a ≤ S1x256x64x128.size a
  slices_S32768x64_o11136_0_S64x64 : S32768x64.Slices ![11136, 0] S64x64
  inb_S1x256x64x128_S1x1x64x64_0_87_0_0 : ∀ a, (![0, 87, 0, 0] : Fin 4 → Nat) a + S1x1x64x64.size a ≤ S1x256x64x128.size a
  slices_S32768x64_o11200_0_S64x64 : S32768x64.Slices ![11200, 0] S64x64
  inb_S1x256x64x128_S1x1x64x64_0_87_0_64 : ∀ a, (![0, 87, 0, 64] : Fin 4 → Nat) a + S1x1x64x64.size a ≤ S1x256x64x128.size a
  slices_S32768x64_o11264_0_S64x64 : S32768x64.Slices ![11264, 0] S64x64
  inb_S1x256x64x128_S1x1x64x64_0_88_0_0 : ∀ a, (![0, 88, 0, 0] : Fin 4 → Nat) a + S1x1x64x64.size a ≤ S1x256x64x128.size a
  slices_S32768x64_o11328_0_S64x64 : S32768x64.Slices ![11328, 0] S64x64
  inb_S1x256x64x128_S1x1x64x64_0_88_0_64 : ∀ a, (![0, 88, 0, 64] : Fin 4 → Nat) a + S1x1x64x64.size a ≤ S1x256x64x128.size a
  slices_S32768x64_o11392_0_S64x64 : S32768x64.Slices ![11392, 0] S64x64
  inb_S1x256x64x128_S1x1x64x64_0_89_0_0 : ∀ a, (![0, 89, 0, 0] : Fin 4 → Nat) a + S1x1x64x64.size a ≤ S1x256x64x128.size a
  slices_S32768x64_o11456_0_S64x64 : S32768x64.Slices ![11456, 0] S64x64
  inb_S1x256x64x128_S1x1x64x64_0_89_0_64 : ∀ a, (![0, 89, 0, 64] : Fin 4 → Nat) a + S1x1x64x64.size a ≤ S1x256x64x128.size a
  slices_S32768x64_o11520_0_S64x64 : S32768x64.Slices ![11520, 0] S64x64
  inb_S1x256x64x128_S1x1x64x64_0_90_0_0 : ∀ a, (![0, 90, 0, 0] : Fin 4 → Nat) a + S1x1x64x64.size a ≤ S1x256x64x128.size a
  slices_S32768x64_o11584_0_S64x64 : S32768x64.Slices ![11584, 0] S64x64
  inb_S1x256x64x128_S1x1x64x64_0_90_0_64 : ∀ a, (![0, 90, 0, 64] : Fin 4 → Nat) a + S1x1x64x64.size a ≤ S1x256x64x128.size a
  slices_S32768x64_o11648_0_S64x64 : S32768x64.Slices ![11648, 0] S64x64
  inb_S1x256x64x128_S1x1x64x64_0_91_0_0 : ∀ a, (![0, 91, 0, 0] : Fin 4 → Nat) a + S1x1x64x64.size a ≤ S1x256x64x128.size a
  slices_S32768x64_o11712_0_S64x64 : S32768x64.Slices ![11712, 0] S64x64
  inb_S1x256x64x128_S1x1x64x64_0_91_0_64 : ∀ a, (![0, 91, 0, 64] : Fin 4 → Nat) a + S1x1x64x64.size a ≤ S1x256x64x128.size a
  slices_S32768x64_o11776_0_S64x64 : S32768x64.Slices ![11776, 0] S64x64
  inb_S1x256x64x128_S1x1x64x64_0_92_0_0 : ∀ a, (![0, 92, 0, 0] : Fin 4 → Nat) a + S1x1x64x64.size a ≤ S1x256x64x128.size a
  slices_S32768x64_o11840_0_S64x64 : S32768x64.Slices ![11840, 0] S64x64
  inb_S1x256x64x128_S1x1x64x64_0_92_0_64 : ∀ a, (![0, 92, 0, 64] : Fin 4 → Nat) a + S1x1x64x64.size a ≤ S1x256x64x128.size a
  slices_S32768x64_o11904_0_S64x64 : S32768x64.Slices ![11904, 0] S64x64
  inb_S1x256x64x128_S1x1x64x64_0_93_0_0 : ∀ a, (![0, 93, 0, 0] : Fin 4 → Nat) a + S1x1x64x64.size a ≤ S1x256x64x128.size a
  slices_S32768x64_o11968_0_S64x64 : S32768x64.Slices ![11968, 0] S64x64
  inb_S1x256x64x128_S1x1x64x64_0_93_0_64 : ∀ a, (![0, 93, 0, 64] : Fin 4 → Nat) a + S1x1x64x64.size a ≤ S1x256x64x128.size a
  slices_S32768x64_o12032_0_S64x64 : S32768x64.Slices ![12032, 0] S64x64
  inb_S1x256x64x128_S1x1x64x64_0_94_0_0 : ∀ a, (![0, 94, 0, 0] : Fin 4 → Nat) a + S1x1x64x64.size a ≤ S1x256x64x128.size a
  slices_S32768x64_o12096_0_S64x64 : S32768x64.Slices ![12096, 0] S64x64
  inb_S1x256x64x128_S1x1x64x64_0_94_0_64 : ∀ a, (![0, 94, 0, 64] : Fin 4 → Nat) a + S1x1x64x64.size a ≤ S1x256x64x128.size a
  slices_S32768x64_o12160_0_S64x64 : S32768x64.Slices ![12160, 0] S64x64
  inb_S1x256x64x128_S1x1x64x64_0_95_0_0 : ∀ a, (![0, 95, 0, 0] : Fin 4 → Nat) a + S1x1x64x64.size a ≤ S1x256x64x128.size a
  slices_S32768x64_o12224_0_S64x64 : S32768x64.Slices ![12224, 0] S64x64
  inb_S1x256x64x128_S1x1x64x64_0_95_0_64 : ∀ a, (![0, 95, 0, 64] : Fin 4 → Nat) a + S1x1x64x64.size a ≤ S1x256x64x128.size a
  slices_S32768x64_o12288_0_S64x64 : S32768x64.Slices ![12288, 0] S64x64
  inb_S1x256x64x128_S1x1x64x64_0_96_0_0 : ∀ a, (![0, 96, 0, 0] : Fin 4 → Nat) a + S1x1x64x64.size a ≤ S1x256x64x128.size a
  slices_S32768x64_o12352_0_S64x64 : S32768x64.Slices ![12352, 0] S64x64
  inb_S1x256x64x128_S1x1x64x64_0_96_0_64 : ∀ a, (![0, 96, 0, 64] : Fin 4 → Nat) a + S1x1x64x64.size a ≤ S1x256x64x128.size a
  slices_S32768x64_o12416_0_S64x64 : S32768x64.Slices ![12416, 0] S64x64
  inb_S1x256x64x128_S1x1x64x64_0_97_0_0 : ∀ a, (![0, 97, 0, 0] : Fin 4 → Nat) a + S1x1x64x64.size a ≤ S1x256x64x128.size a
  slices_S32768x64_o12480_0_S64x64 : S32768x64.Slices ![12480, 0] S64x64
  inb_S1x256x64x128_S1x1x64x64_0_97_0_64 : ∀ a, (![0, 97, 0, 64] : Fin 4 → Nat) a + S1x1x64x64.size a ≤ S1x256x64x128.size a
  slices_S32768x64_o12544_0_S64x64 : S32768x64.Slices ![12544, 0] S64x64
  inb_S1x256x64x128_S1x1x64x64_0_98_0_0 : ∀ a, (![0, 98, 0, 0] : Fin 4 → Nat) a + S1x1x64x64.size a ≤ S1x256x64x128.size a
  slices_S32768x64_o12608_0_S64x64 : S32768x64.Slices ![12608, 0] S64x64
  inb_S1x256x64x128_S1x1x64x64_0_98_0_64 : ∀ a, (![0, 98, 0, 64] : Fin 4 → Nat) a + S1x1x64x64.size a ≤ S1x256x64x128.size a
  slices_S32768x64_o12672_0_S64x64 : S32768x64.Slices ![12672, 0] S64x64
  inb_S1x256x64x128_S1x1x64x64_0_99_0_0 : ∀ a, (![0, 99, 0, 0] : Fin 4 → Nat) a + S1x1x64x64.size a ≤ S1x256x64x128.size a
  slices_S32768x64_o12736_0_S64x64 : S32768x64.Slices ![12736, 0] S64x64
  inb_S1x256x64x128_S1x1x64x64_0_99_0_64 : ∀ a, (![0, 99, 0, 64] : Fin 4 → Nat) a + S1x1x64x64.size a ≤ S1x256x64x128.size a
  slices_S32768x64_o12800_0_S64x64 : S32768x64.Slices ![12800, 0] S64x64
  inb_S1x256x64x128_S1x1x64x64_0_100_0_0 : ∀ a, (![0, 100, 0, 0] : Fin 4 → Nat) a + S1x1x64x64.size a ≤ S1x256x64x128.size a
  slices_S32768x64_o12864_0_S64x64 : S32768x64.Slices ![12864, 0] S64x64
  inb_S1x256x64x128_S1x1x64x64_0_100_0_64 : ∀ a, (![0, 100, 0, 64] : Fin 4 → Nat) a + S1x1x64x64.size a ≤ S1x256x64x128.size a
  slices_S32768x64_o12928_0_S64x64 : S32768x64.Slices ![12928, 0] S64x64
  inb_S1x256x64x128_S1x1x64x64_0_101_0_0 : ∀ a, (![0, 101, 0, 0] : Fin 4 → Nat) a + S1x1x64x64.size a ≤ S1x256x64x128.size a
  slices_S32768x64_o12992_0_S64x64 : S32768x64.Slices ![12992, 0] S64x64
  inb_S1x256x64x128_S1x1x64x64_0_101_0_64 : ∀ a, (![0, 101, 0, 64] : Fin 4 → Nat) a + S1x1x64x64.size a ≤ S1x256x64x128.size a
  slices_S32768x64_o13056_0_S64x64 : S32768x64.Slices ![13056, 0] S64x64
  inb_S1x256x64x128_S1x1x64x64_0_102_0_0 : ∀ a, (![0, 102, 0, 0] : Fin 4 → Nat) a + S1x1x64x64.size a ≤ S1x256x64x128.size a
  slices_S32768x64_o13120_0_S64x64 : S32768x64.Slices ![13120, 0] S64x64
  inb_S1x256x64x128_S1x1x64x64_0_102_0_64 : ∀ a, (![0, 102, 0, 64] : Fin 4 → Nat) a + S1x1x64x64.size a ≤ S1x256x64x128.size a
  slices_S32768x64_o13184_0_S64x64 : S32768x64.Slices ![13184, 0] S64x64
  inb_S1x256x64x128_S1x1x64x64_0_103_0_0 : ∀ a, (![0, 103, 0, 0] : Fin 4 → Nat) a + S1x1x64x64.size a ≤ S1x256x64x128.size a
  slices_S32768x64_o13248_0_S64x64 : S32768x64.Slices ![13248, 0] S64x64
  inb_S1x256x64x128_S1x1x64x64_0_103_0_64 : ∀ a, (![0, 103, 0, 64] : Fin 4 → Nat) a + S1x1x64x64.size a ≤ S1x256x64x128.size a
  slices_S32768x64_o13312_0_S64x64 : S32768x64.Slices ![13312, 0] S64x64
  inb_S1x256x64x128_S1x1x64x64_0_104_0_0 : ∀ a, (![0, 104, 0, 0] : Fin 4 → Nat) a + S1x1x64x64.size a ≤ S1x256x64x128.size a
  slices_S32768x64_o13376_0_S64x64 : S32768x64.Slices ![13376, 0] S64x64
  inb_S1x256x64x128_S1x1x64x64_0_104_0_64 : ∀ a, (![0, 104, 0, 64] : Fin 4 → Nat) a + S1x1x64x64.size a ≤ S1x256x64x128.size a
  slices_S32768x64_o13440_0_S64x64 : S32768x64.Slices ![13440, 0] S64x64
  inb_S1x256x64x128_S1x1x64x64_0_105_0_0 : ∀ a, (![0, 105, 0, 0] : Fin 4 → Nat) a + S1x1x64x64.size a ≤ S1x256x64x128.size a
  slices_S32768x64_o13504_0_S64x64 : S32768x64.Slices ![13504, 0] S64x64
  inb_S1x256x64x128_S1x1x64x64_0_105_0_64 : ∀ a, (![0, 105, 0, 64] : Fin 4 → Nat) a + S1x1x64x64.size a ≤ S1x256x64x128.size a
  slices_S32768x64_o13568_0_S64x64 : S32768x64.Slices ![13568, 0] S64x64
  inb_S1x256x64x128_S1x1x64x64_0_106_0_0 : ∀ a, (![0, 106, 0, 0] : Fin 4 → Nat) a + S1x1x64x64.size a ≤ S1x256x64x128.size a
  slices_S32768x64_o13632_0_S64x64 : S32768x64.Slices ![13632, 0] S64x64
  inb_S1x256x64x128_S1x1x64x64_0_106_0_64 : ∀ a, (![0, 106, 0, 64] : Fin 4 → Nat) a + S1x1x64x64.size a ≤ S1x256x64x128.size a
  slices_S32768x64_o13696_0_S64x64 : S32768x64.Slices ![13696, 0] S64x64
  inb_S1x256x64x128_S1x1x64x64_0_107_0_0 : ∀ a, (![0, 107, 0, 0] : Fin 4 → Nat) a + S1x1x64x64.size a ≤ S1x256x64x128.size a
  slices_S32768x64_o13760_0_S64x64 : S32768x64.Slices ![13760, 0] S64x64
  inb_S1x256x64x128_S1x1x64x64_0_107_0_64 : ∀ a, (![0, 107, 0, 64] : Fin 4 → Nat) a + S1x1x64x64.size a ≤ S1x256x64x128.size a
  slices_S32768x64_o13824_0_S64x64 : S32768x64.Slices ![13824, 0] S64x64
  inb_S1x256x64x128_S1x1x64x64_0_108_0_0 : ∀ a, (![0, 108, 0, 0] : Fin 4 → Nat) a + S1x1x64x64.size a ≤ S1x256x64x128.size a
  slices_S32768x64_o13888_0_S64x64 : S32768x64.Slices ![13888, 0] S64x64
  inb_S1x256x64x128_S1x1x64x64_0_108_0_64 : ∀ a, (![0, 108, 0, 64] : Fin 4 → Nat) a + S1x1x64x64.size a ≤ S1x256x64x128.size a
  slices_S32768x64_o13952_0_S64x64 : S32768x64.Slices ![13952, 0] S64x64
  inb_S1x256x64x128_S1x1x64x64_0_109_0_0 : ∀ a, (![0, 109, 0, 0] : Fin 4 → Nat) a + S1x1x64x64.size a ≤ S1x256x64x128.size a
  slices_S32768x64_o14016_0_S64x64 : S32768x64.Slices ![14016, 0] S64x64
  inb_S1x256x64x128_S1x1x64x64_0_109_0_64 : ∀ a, (![0, 109, 0, 64] : Fin 4 → Nat) a + S1x1x64x64.size a ≤ S1x256x64x128.size a
  slices_S32768x64_o14080_0_S64x64 : S32768x64.Slices ![14080, 0] S64x64
  inb_S1x256x64x128_S1x1x64x64_0_110_0_0 : ∀ a, (![0, 110, 0, 0] : Fin 4 → Nat) a + S1x1x64x64.size a ≤ S1x256x64x128.size a
  slices_S32768x64_o14144_0_S64x64 : S32768x64.Slices ![14144, 0] S64x64
  inb_S1x256x64x128_S1x1x64x64_0_110_0_64 : ∀ a, (![0, 110, 0, 64] : Fin 4 → Nat) a + S1x1x64x64.size a ≤ S1x256x64x128.size a
  slices_S32768x64_o14208_0_S64x64 : S32768x64.Slices ![14208, 0] S64x64
  inb_S1x256x64x128_S1x1x64x64_0_111_0_0 : ∀ a, (![0, 111, 0, 0] : Fin 4 → Nat) a + S1x1x64x64.size a ≤ S1x256x64x128.size a
  slices_S32768x64_o14272_0_S64x64 : S32768x64.Slices ![14272, 0] S64x64
  inb_S1x256x64x128_S1x1x64x64_0_111_0_64 : ∀ a, (![0, 111, 0, 64] : Fin 4 → Nat) a + S1x1x64x64.size a ≤ S1x256x64x128.size a
  slices_S32768x64_o14336_0_S64x64 : S32768x64.Slices ![14336, 0] S64x64
  inb_S1x256x64x128_S1x1x64x64_0_112_0_0 : ∀ a, (![0, 112, 0, 0] : Fin 4 → Nat) a + S1x1x64x64.size a ≤ S1x256x64x128.size a
  slices_S32768x64_o14400_0_S64x64 : S32768x64.Slices ![14400, 0] S64x64
  inb_S1x256x64x128_S1x1x64x64_0_112_0_64 : ∀ a, (![0, 112, 0, 64] : Fin 4 → Nat) a + S1x1x64x64.size a ≤ S1x256x64x128.size a
  slices_S32768x64_o14464_0_S64x64 : S32768x64.Slices ![14464, 0] S64x64
  inb_S1x256x64x128_S1x1x64x64_0_113_0_0 : ∀ a, (![0, 113, 0, 0] : Fin 4 → Nat) a + S1x1x64x64.size a ≤ S1x256x64x128.size a
  slices_S32768x64_o14528_0_S64x64 : S32768x64.Slices ![14528, 0] S64x64
  inb_S1x256x64x128_S1x1x64x64_0_113_0_64 : ∀ a, (![0, 113, 0, 64] : Fin 4 → Nat) a + S1x1x64x64.size a ≤ S1x256x64x128.size a
  slices_S32768x64_o14592_0_S64x64 : S32768x64.Slices ![14592, 0] S64x64
  inb_S1x256x64x128_S1x1x64x64_0_114_0_0 : ∀ a, (![0, 114, 0, 0] : Fin 4 → Nat) a + S1x1x64x64.size a ≤ S1x256x64x128.size a
  slices_S32768x64_o14656_0_S64x64 : S32768x64.Slices ![14656, 0] S64x64
  inb_S1x256x64x128_S1x1x64x64_0_114_0_64 : ∀ a, (![0, 114, 0, 64] : Fin 4 → Nat) a + S1x1x64x64.size a ≤ S1x256x64x128.size a
  slices_S32768x64_o14720_0_S64x64 : S32768x64.Slices ![14720, 0] S64x64
  inb_S1x256x64x128_S1x1x64x64_0_115_0_0 : ∀ a, (![0, 115, 0, 0] : Fin 4 → Nat) a + S1x1x64x64.size a ≤ S1x256x64x128.size a
  slices_S32768x64_o14784_0_S64x64 : S32768x64.Slices ![14784, 0] S64x64
  inb_S1x256x64x128_S1x1x64x64_0_115_0_64 : ∀ a, (![0, 115, 0, 64] : Fin 4 → Nat) a + S1x1x64x64.size a ≤ S1x256x64x128.size a
  slices_S32768x64_o14848_0_S64x64 : S32768x64.Slices ![14848, 0] S64x64
  inb_S1x256x64x128_S1x1x64x64_0_116_0_0 : ∀ a, (![0, 116, 0, 0] : Fin 4 → Nat) a + S1x1x64x64.size a ≤ S1x256x64x128.size a
  slices_S32768x64_o14912_0_S64x64 : S32768x64.Slices ![14912, 0] S64x64
  inb_S1x256x64x128_S1x1x64x64_0_116_0_64 : ∀ a, (![0, 116, 0, 64] : Fin 4 → Nat) a + S1x1x64x64.size a ≤ S1x256x64x128.size a
  slices_S32768x64_o14976_0_S64x64 : S32768x64.Slices ![14976, 0] S64x64
  inb_S1x256x64x128_S1x1x64x64_0_117_0_0 : ∀ a, (![0, 117, 0, 0] : Fin 4 → Nat) a + S1x1x64x64.size a ≤ S1x256x64x128.size a
  slices_S32768x64_o15040_0_S64x64 : S32768x64.Slices ![15040, 0] S64x64
  inb_S1x256x64x128_S1x1x64x64_0_117_0_64 : ∀ a, (![0, 117, 0, 64] : Fin 4 → Nat) a + S1x1x64x64.size a ≤ S1x256x64x128.size a
  slices_S32768x64_o15104_0_S64x64 : S32768x64.Slices ![15104, 0] S64x64
  inb_S1x256x64x128_S1x1x64x64_0_118_0_0 : ∀ a, (![0, 118, 0, 0] : Fin 4 → Nat) a + S1x1x64x64.size a ≤ S1x256x64x128.size a
  slices_S32768x64_o15168_0_S64x64 : S32768x64.Slices ![15168, 0] S64x64
  inb_S1x256x64x128_S1x1x64x64_0_118_0_64 : ∀ a, (![0, 118, 0, 64] : Fin 4 → Nat) a + S1x1x64x64.size a ≤ S1x256x64x128.size a
  slices_S32768x64_o15232_0_S64x64 : S32768x64.Slices ![15232, 0] S64x64
  inb_S1x256x64x128_S1x1x64x64_0_119_0_0 : ∀ a, (![0, 119, 0, 0] : Fin 4 → Nat) a + S1x1x64x64.size a ≤ S1x256x64x128.size a
  slices_S32768x64_o15296_0_S64x64 : S32768x64.Slices ![15296, 0] S64x64
  inb_S1x256x64x128_S1x1x64x64_0_119_0_64 : ∀ a, (![0, 119, 0, 64] : Fin 4 → Nat) a + S1x1x64x64.size a ≤ S1x256x64x128.size a
  slices_S32768x64_o15360_0_S64x64 : S32768x64.Slices ![15360, 0] S64x64
  inb_S1x256x64x128_S1x1x64x64_0_120_0_0 : ∀ a, (![0, 120, 0, 0] : Fin 4 → Nat) a + S1x1x64x64.size a ≤ S1x256x64x128.size a
  slices_S32768x64_o15424_0_S64x64 : S32768x64.Slices ![15424, 0] S64x64
  inb_S1x256x64x128_S1x1x64x64_0_120_0_64 : ∀ a, (![0, 120, 0, 64] : Fin 4 → Nat) a + S1x1x64x64.size a ≤ S1x256x64x128.size a
  slices_S32768x64_o15488_0_S64x64 : S32768x64.Slices ![15488, 0] S64x64
  inb_S1x256x64x128_S1x1x64x64_0_121_0_0 : ∀ a, (![0, 121, 0, 0] : Fin 4 → Nat) a + S1x1x64x64.size a ≤ S1x256x64x128.size a
  slices_S32768x64_o15552_0_S64x64 : S32768x64.Slices ![15552, 0] S64x64
  inb_S1x256x64x128_S1x1x64x64_0_121_0_64 : ∀ a, (![0, 121, 0, 64] : Fin 4 → Nat) a + S1x1x64x64.size a ≤ S1x256x64x128.size a
  slices_S32768x64_o15616_0_S64x64 : S32768x64.Slices ![15616, 0] S64x64
  inb_S1x256x64x128_S1x1x64x64_0_122_0_0 : ∀ a, (![0, 122, 0, 0] : Fin 4 → Nat) a + S1x1x64x64.size a ≤ S1x256x64x128.size a
  slices_S32768x64_o15680_0_S64x64 : S32768x64.Slices ![15680, 0] S64x64
  inb_S1x256x64x128_S1x1x64x64_0_122_0_64 : ∀ a, (![0, 122, 0, 64] : Fin 4 → Nat) a + S1x1x64x64.size a ≤ S1x256x64x128.size a
  slices_S32768x64_o15744_0_S64x64 : S32768x64.Slices ![15744, 0] S64x64
  inb_S1x256x64x128_S1x1x64x64_0_123_0_0 : ∀ a, (![0, 123, 0, 0] : Fin 4 → Nat) a + S1x1x64x64.size a ≤ S1x256x64x128.size a
  slices_S32768x64_o15808_0_S64x64 : S32768x64.Slices ![15808, 0] S64x64
  inb_S1x256x64x128_S1x1x64x64_0_123_0_64 : ∀ a, (![0, 123, 0, 64] : Fin 4 → Nat) a + S1x1x64x64.size a ≤ S1x256x64x128.size a
  slices_S32768x64_o15872_0_S64x64 : S32768x64.Slices ![15872, 0] S64x64
  inb_S1x256x64x128_S1x1x64x64_0_124_0_0 : ∀ a, (![0, 124, 0, 0] : Fin 4 → Nat) a + S1x1x64x64.size a ≤ S1x256x64x128.size a
  slices_S32768x64_o15936_0_S64x64 : S32768x64.Slices ![15936, 0] S64x64
  inb_S1x256x64x128_S1x1x64x64_0_124_0_64 : ∀ a, (![0, 124, 0, 64] : Fin 4 → Nat) a + S1x1x64x64.size a ≤ S1x256x64x128.size a
  slices_S32768x64_o16000_0_S64x64 : S32768x64.Slices ![16000, 0] S64x64
  inb_S1x256x64x128_S1x1x64x64_0_125_0_0 : ∀ a, (![0, 125, 0, 0] : Fin 4 → Nat) a + S1x1x64x64.size a ≤ S1x256x64x128.size a
  slices_S32768x64_o16064_0_S64x64 : S32768x64.Slices ![16064, 0] S64x64
  inb_S1x256x64x128_S1x1x64x64_0_125_0_64 : ∀ a, (![0, 125, 0, 64] : Fin 4 → Nat) a + S1x1x64x64.size a ≤ S1x256x64x128.size a
  slices_S32768x64_o16128_0_S64x64 : S32768x64.Slices ![16128, 0] S64x64
  inb_S1x256x64x128_S1x1x64x64_0_126_0_0 : ∀ a, (![0, 126, 0, 0] : Fin 4 → Nat) a + S1x1x64x64.size a ≤ S1x256x64x128.size a
  slices_S32768x64_o16192_0_S64x64 : S32768x64.Slices ![16192, 0] S64x64
  inb_S1x256x64x128_S1x1x64x64_0_126_0_64 : ∀ a, (![0, 126, 0, 64] : Fin 4 → Nat) a + S1x1x64x64.size a ≤ S1x256x64x128.size a
  slices_S32768x64_o16256_0_S64x64 : S32768x64.Slices ![16256, 0] S64x64
  inb_S1x256x64x128_S1x1x64x64_0_127_0_0 : ∀ a, (![0, 127, 0, 0] : Fin 4 → Nat) a + S1x1x64x64.size a ≤ S1x256x64x128.size a
  slices_S32768x64_o16320_0_S64x64 : S32768x64.Slices ![16320, 0] S64x64
  inb_S1x256x64x128_S1x1x64x64_0_127_0_64 : ∀ a, (![0, 127, 0, 64] : Fin 4 → Nat) a + S1x1x64x64.size a ≤ S1x256x64x128.size a
  slices_S32768x64_o16384_0_S64x64 : S32768x64.Slices ![16384, 0] S64x64
  inb_S1x256x64x128_S1x1x64x64_0_128_0_0 : ∀ a, (![0, 128, 0, 0] : Fin 4 → Nat) a + S1x1x64x64.size a ≤ S1x256x64x128.size a
  slices_S32768x64_o16448_0_S64x64 : S32768x64.Slices ![16448, 0] S64x64
  inb_S1x256x64x128_S1x1x64x64_0_128_0_64 : ∀ a, (![0, 128, 0, 64] : Fin 4 → Nat) a + S1x1x64x64.size a ≤ S1x256x64x128.size a
  slices_S32768x64_o16512_0_S64x64 : S32768x64.Slices ![16512, 0] S64x64
  inb_S1x256x64x128_S1x1x64x64_0_129_0_0 : ∀ a, (![0, 129, 0, 0] : Fin 4 → Nat) a + S1x1x64x64.size a ≤ S1x256x64x128.size a
  slices_S32768x64_o16576_0_S64x64 : S32768x64.Slices ![16576, 0] S64x64
  inb_S1x256x64x128_S1x1x64x64_0_129_0_64 : ∀ a, (![0, 129, 0, 64] : Fin 4 → Nat) a + S1x1x64x64.size a ≤ S1x256x64x128.size a
  slices_S32768x64_o16640_0_S64x64 : S32768x64.Slices ![16640, 0] S64x64
  inb_S1x256x64x128_S1x1x64x64_0_130_0_0 : ∀ a, (![0, 130, 0, 0] : Fin 4 → Nat) a + S1x1x64x64.size a ≤ S1x256x64x128.size a
  slices_S32768x64_o16704_0_S64x64 : S32768x64.Slices ![16704, 0] S64x64
  inb_S1x256x64x128_S1x1x64x64_0_130_0_64 : ∀ a, (![0, 130, 0, 64] : Fin 4 → Nat) a + S1x1x64x64.size a ≤ S1x256x64x128.size a
  slices_S32768x64_o16768_0_S64x64 : S32768x64.Slices ![16768, 0] S64x64
  inb_S1x256x64x128_S1x1x64x64_0_131_0_0 : ∀ a, (![0, 131, 0, 0] : Fin 4 → Nat) a + S1x1x64x64.size a ≤ S1x256x64x128.size a
  slices_S32768x64_o16832_0_S64x64 : S32768x64.Slices ![16832, 0] S64x64
  inb_S1x256x64x128_S1x1x64x64_0_131_0_64 : ∀ a, (![0, 131, 0, 64] : Fin 4 → Nat) a + S1x1x64x64.size a ≤ S1x256x64x128.size a
  slices_S32768x64_o16896_0_S64x64 : S32768x64.Slices ![16896, 0] S64x64
  inb_S1x256x64x128_S1x1x64x64_0_132_0_0 : ∀ a, (![0, 132, 0, 0] : Fin 4 → Nat) a + S1x1x64x64.size a ≤ S1x256x64x128.size a
  slices_S32768x64_o16960_0_S64x64 : S32768x64.Slices ![16960, 0] S64x64
  inb_S1x256x64x128_S1x1x64x64_0_132_0_64 : ∀ a, (![0, 132, 0, 64] : Fin 4 → Nat) a + S1x1x64x64.size a ≤ S1x256x64x128.size a
  slices_S32768x64_o17024_0_S64x64 : S32768x64.Slices ![17024, 0] S64x64
  inb_S1x256x64x128_S1x1x64x64_0_133_0_0 : ∀ a, (![0, 133, 0, 0] : Fin 4 → Nat) a + S1x1x64x64.size a ≤ S1x256x64x128.size a
  slices_S32768x64_o17088_0_S64x64 : S32768x64.Slices ![17088, 0] S64x64
  inb_S1x256x64x128_S1x1x64x64_0_133_0_64 : ∀ a, (![0, 133, 0, 64] : Fin 4 → Nat) a + S1x1x64x64.size a ≤ S1x256x64x128.size a
  slices_S32768x64_o17152_0_S64x64 : S32768x64.Slices ![17152, 0] S64x64
  inb_S1x256x64x128_S1x1x64x64_0_134_0_0 : ∀ a, (![0, 134, 0, 0] : Fin 4 → Nat) a + S1x1x64x64.size a ≤ S1x256x64x128.size a
  slices_S32768x64_o17216_0_S64x64 : S32768x64.Slices ![17216, 0] S64x64
  inb_S1x256x64x128_S1x1x64x64_0_134_0_64 : ∀ a, (![0, 134, 0, 64] : Fin 4 → Nat) a + S1x1x64x64.size a ≤ S1x256x64x128.size a
  slices_S32768x64_o17280_0_S64x64 : S32768x64.Slices ![17280, 0] S64x64
  inb_S1x256x64x128_S1x1x64x64_0_135_0_0 : ∀ a, (![0, 135, 0, 0] : Fin 4 → Nat) a + S1x1x64x64.size a ≤ S1x256x64x128.size a
  slices_S32768x64_o17344_0_S64x64 : S32768x64.Slices ![17344, 0] S64x64
  inb_S1x256x64x128_S1x1x64x64_0_135_0_64 : ∀ a, (![0, 135, 0, 64] : Fin 4 → Nat) a + S1x1x64x64.size a ≤ S1x256x64x128.size a
  slices_S32768x64_o17408_0_S64x64 : S32768x64.Slices ![17408, 0] S64x64
  inb_S1x256x64x128_S1x1x64x64_0_136_0_0 : ∀ a, (![0, 136, 0, 0] : Fin 4 → Nat) a + S1x1x64x64.size a ≤ S1x256x64x128.size a
  slices_S32768x64_o17472_0_S64x64 : S32768x64.Slices ![17472, 0] S64x64
  inb_S1x256x64x128_S1x1x64x64_0_136_0_64 : ∀ a, (![0, 136, 0, 64] : Fin 4 → Nat) a + S1x1x64x64.size a ≤ S1x256x64x128.size a
  slices_S32768x64_o17536_0_S64x64 : S32768x64.Slices ![17536, 0] S64x64
  inb_S1x256x64x128_S1x1x64x64_0_137_0_0 : ∀ a, (![0, 137, 0, 0] : Fin 4 → Nat) a + S1x1x64x64.size a ≤ S1x256x64x128.size a
  slices_S32768x64_o17600_0_S64x64 : S32768x64.Slices ![17600, 0] S64x64
  inb_S1x256x64x128_S1x1x64x64_0_137_0_64 : ∀ a, (![0, 137, 0, 64] : Fin 4 → Nat) a + S1x1x64x64.size a ≤ S1x256x64x128.size a
  slices_S32768x64_o17664_0_S64x64 : S32768x64.Slices ![17664, 0] S64x64
  inb_S1x256x64x128_S1x1x64x64_0_138_0_0 : ∀ a, (![0, 138, 0, 0] : Fin 4 → Nat) a + S1x1x64x64.size a ≤ S1x256x64x128.size a
  slices_S32768x64_o17728_0_S64x64 : S32768x64.Slices ![17728, 0] S64x64
  inb_S1x256x64x128_S1x1x64x64_0_138_0_64 : ∀ a, (![0, 138, 0, 64] : Fin 4 → Nat) a + S1x1x64x64.size a ≤ S1x256x64x128.size a
  slices_S32768x64_o17792_0_S64x64 : S32768x64.Slices ![17792, 0] S64x64
  inb_S1x256x64x128_S1x1x64x64_0_139_0_0 : ∀ a, (![0, 139, 0, 0] : Fin 4 → Nat) a + S1x1x64x64.size a ≤ S1x256x64x128.size a
  slices_S32768x64_o17856_0_S64x64 : S32768x64.Slices ![17856, 0] S64x64
  inb_S1x256x64x128_S1x1x64x64_0_139_0_64 : ∀ a, (![0, 139, 0, 64] : Fin 4 → Nat) a + S1x1x64x64.size a ≤ S1x256x64x128.size a
  slices_S32768x64_o17920_0_S64x64 : S32768x64.Slices ![17920, 0] S64x64
  inb_S1x256x64x128_S1x1x64x64_0_140_0_0 : ∀ a, (![0, 140, 0, 0] : Fin 4 → Nat) a + S1x1x64x64.size a ≤ S1x256x64x128.size a
  slices_S32768x64_o17984_0_S64x64 : S32768x64.Slices ![17984, 0] S64x64
  inb_S1x256x64x128_S1x1x64x64_0_140_0_64 : ∀ a, (![0, 140, 0, 64] : Fin 4 → Nat) a + S1x1x64x64.size a ≤ S1x256x64x128.size a
  slices_S32768x64_o18048_0_S64x64 : S32768x64.Slices ![18048, 0] S64x64
  inb_S1x256x64x128_S1x1x64x64_0_141_0_0 : ∀ a, (![0, 141, 0, 0] : Fin 4 → Nat) a + S1x1x64x64.size a ≤ S1x256x64x128.size a
  slices_S32768x64_o18112_0_S64x64 : S32768x64.Slices ![18112, 0] S64x64
  inb_S1x256x64x128_S1x1x64x64_0_141_0_64 : ∀ a, (![0, 141, 0, 64] : Fin 4 → Nat) a + S1x1x64x64.size a ≤ S1x256x64x128.size a
  slices_S32768x64_o18176_0_S64x64 : S32768x64.Slices ![18176, 0] S64x64
  inb_S1x256x64x128_S1x1x64x64_0_142_0_0 : ∀ a, (![0, 142, 0, 0] : Fin 4 → Nat) a + S1x1x64x64.size a ≤ S1x256x64x128.size a
  slices_S32768x64_o18240_0_S64x64 : S32768x64.Slices ![18240, 0] S64x64
  inb_S1x256x64x128_S1x1x64x64_0_142_0_64 : ∀ a, (![0, 142, 0, 64] : Fin 4 → Nat) a + S1x1x64x64.size a ≤ S1x256x64x128.size a
  slices_S32768x64_o18304_0_S64x64 : S32768x64.Slices ![18304, 0] S64x64
  inb_S1x256x64x128_S1x1x64x64_0_143_0_0 : ∀ a, (![0, 143, 0, 0] : Fin 4 → Nat) a + S1x1x64x64.size a ≤ S1x256x64x128.size a
  slices_S32768x64_o18368_0_S64x64 : S32768x64.Slices ![18368, 0] S64x64
  inb_S1x256x64x128_S1x1x64x64_0_143_0_64 : ∀ a, (![0, 143, 0, 64] : Fin 4 → Nat) a + S1x1x64x64.size a ≤ S1x256x64x128.size a
  slices_S32768x64_o18432_0_S64x64 : S32768x64.Slices ![18432, 0] S64x64
  inb_S1x256x64x128_S1x1x64x64_0_144_0_0 : ∀ a, (![0, 144, 0, 0] : Fin 4 → Nat) a + S1x1x64x64.size a ≤ S1x256x64x128.size a
  slices_S32768x64_o18496_0_S64x64 : S32768x64.Slices ![18496, 0] S64x64
  inb_S1x256x64x128_S1x1x64x64_0_144_0_64 : ∀ a, (![0, 144, 0, 64] : Fin 4 → Nat) a + S1x1x64x64.size a ≤ S1x256x64x128.size a
  slices_S32768x64_o18560_0_S64x64 : S32768x64.Slices ![18560, 0] S64x64
  inb_S1x256x64x128_S1x1x64x64_0_145_0_0 : ∀ a, (![0, 145, 0, 0] : Fin 4 → Nat) a + S1x1x64x64.size a ≤ S1x256x64x128.size a
  slices_S32768x64_o18624_0_S64x64 : S32768x64.Slices ![18624, 0] S64x64
  inb_S1x256x64x128_S1x1x64x64_0_145_0_64 : ∀ a, (![0, 145, 0, 64] : Fin 4 → Nat) a + S1x1x64x64.size a ≤ S1x256x64x128.size a
  slices_S32768x64_o18688_0_S64x64 : S32768x64.Slices ![18688, 0] S64x64
  inb_S1x256x64x128_S1x1x64x64_0_146_0_0 : ∀ a, (![0, 146, 0, 0] : Fin 4 → Nat) a + S1x1x64x64.size a ≤ S1x256x64x128.size a
  slices_S32768x64_o18752_0_S64x64 : S32768x64.Slices ![18752, 0] S64x64
  inb_S1x256x64x128_S1x1x64x64_0_146_0_64 : ∀ a, (![0, 146, 0, 64] : Fin 4 → Nat) a + S1x1x64x64.size a ≤ S1x256x64x128.size a
  slices_S32768x64_o18816_0_S64x64 : S32768x64.Slices ![18816, 0] S64x64
  inb_S1x256x64x128_S1x1x64x64_0_147_0_0 : ∀ a, (![0, 147, 0, 0] : Fin 4 → Nat) a + S1x1x64x64.size a ≤ S1x256x64x128.size a
  slices_S32768x64_o18880_0_S64x64 : S32768x64.Slices ![18880, 0] S64x64
  inb_S1x256x64x128_S1x1x64x64_0_147_0_64 : ∀ a, (![0, 147, 0, 64] : Fin 4 → Nat) a + S1x1x64x64.size a ≤ S1x256x64x128.size a
  slices_S32768x64_o18944_0_S64x64 : S32768x64.Slices ![18944, 0] S64x64
  inb_S1x256x64x128_S1x1x64x64_0_148_0_0 : ∀ a, (![0, 148, 0, 0] : Fin 4 → Nat) a + S1x1x64x64.size a ≤ S1x256x64x128.size a
  slices_S32768x64_o19008_0_S64x64 : S32768x64.Slices ![19008, 0] S64x64
  inb_S1x256x64x128_S1x1x64x64_0_148_0_64 : ∀ a, (![0, 148, 0, 64] : Fin 4 → Nat) a + S1x1x64x64.size a ≤ S1x256x64x128.size a
  slices_S32768x64_o19072_0_S64x64 : S32768x64.Slices ![19072, 0] S64x64
  inb_S1x256x64x128_S1x1x64x64_0_149_0_0 : ∀ a, (![0, 149, 0, 0] : Fin 4 → Nat) a + S1x1x64x64.size a ≤ S1x256x64x128.size a
  slices_S32768x64_o19136_0_S64x64 : S32768x64.Slices ![19136, 0] S64x64
  inb_S1x256x64x128_S1x1x64x64_0_149_0_64 : ∀ a, (![0, 149, 0, 64] : Fin 4 → Nat) a + S1x1x64x64.size a ≤ S1x256x64x128.size a
  slices_S32768x64_o19200_0_S64x64 : S32768x64.Slices ![19200, 0] S64x64
  inb_S1x256x64x128_S1x1x64x64_0_150_0_0 : ∀ a, (![0, 150, 0, 0] : Fin 4 → Nat) a + S1x1x64x64.size a ≤ S1x256x64x128.size a
  slices_S32768x64_o19264_0_S64x64 : S32768x64.Slices ![19264, 0] S64x64
  inb_S1x256x64x128_S1x1x64x64_0_150_0_64 : ∀ a, (![0, 150, 0, 64] : Fin 4 → Nat) a + S1x1x64x64.size a ≤ S1x256x64x128.size a
  slices_S32768x64_o19328_0_S64x64 : S32768x64.Slices ![19328, 0] S64x64
  inb_S1x256x64x128_S1x1x64x64_0_151_0_0 : ∀ a, (![0, 151, 0, 0] : Fin 4 → Nat) a + S1x1x64x64.size a ≤ S1x256x64x128.size a
  slices_S32768x64_o19392_0_S64x64 : S32768x64.Slices ![19392, 0] S64x64
  inb_S1x256x64x128_S1x1x64x64_0_151_0_64 : ∀ a, (![0, 151, 0, 64] : Fin 4 → Nat) a + S1x1x64x64.size a ≤ S1x256x64x128.size a
  slices_S32768x64_o19456_0_S64x64 : S32768x64.Slices ![19456, 0] S64x64
  inb_S1x256x64x128_S1x1x64x64_0_152_0_0 : ∀ a, (![0, 152, 0, 0] : Fin 4 → Nat) a + S1x1x64x64.size a ≤ S1x256x64x128.size a
  slices_S32768x64_o19520_0_S64x64 : S32768x64.Slices ![19520, 0] S64x64
  inb_S1x256x64x128_S1x1x64x64_0_152_0_64 : ∀ a, (![0, 152, 0, 64] : Fin 4 → Nat) a + S1x1x64x64.size a ≤ S1x256x64x128.size a
  slices_S32768x64_o19584_0_S64x64 : S32768x64.Slices ![19584, 0] S64x64
  inb_S1x256x64x128_S1x1x64x64_0_153_0_0 : ∀ a, (![0, 153, 0, 0] : Fin 4 → Nat) a + S1x1x64x64.size a ≤ S1x256x64x128.size a
  slices_S32768x64_o19648_0_S64x64 : S32768x64.Slices ![19648, 0] S64x64
  inb_S1x256x64x128_S1x1x64x64_0_153_0_64 : ∀ a, (![0, 153, 0, 64] : Fin 4 → Nat) a + S1x1x64x64.size a ≤ S1x256x64x128.size a
  slices_S32768x64_o19712_0_S64x64 : S32768x64.Slices ![19712, 0] S64x64
  inb_S1x256x64x128_S1x1x64x64_0_154_0_0 : ∀ a, (![0, 154, 0, 0] : Fin 4 → Nat) a + S1x1x64x64.size a ≤ S1x256x64x128.size a
  slices_S32768x64_o19776_0_S64x64 : S32768x64.Slices ![19776, 0] S64x64
  inb_S1x256x64x128_S1x1x64x64_0_154_0_64 : ∀ a, (![0, 154, 0, 64] : Fin 4 → Nat) a + S1x1x64x64.size a ≤ S1x256x64x128.size a
  slices_S32768x64_o19840_0_S64x64 : S32768x64.Slices ![19840, 0] S64x64
  inb_S1x256x64x128_S1x1x64x64_0_155_0_0 : ∀ a, (![0, 155, 0, 0] : Fin 4 → Nat) a + S1x1x64x64.size a ≤ S1x256x64x128.size a
  slices_S32768x64_o19904_0_S64x64 : S32768x64.Slices ![19904, 0] S64x64
  inb_S1x256x64x128_S1x1x64x64_0_155_0_64 : ∀ a, (![0, 155, 0, 64] : Fin 4 → Nat) a + S1x1x64x64.size a ≤ S1x256x64x128.size a
  slices_S32768x64_o19968_0_S64x64 : S32768x64.Slices ![19968, 0] S64x64
  inb_S1x256x64x128_S1x1x64x64_0_156_0_0 : ∀ a, (![0, 156, 0, 0] : Fin 4 → Nat) a + S1x1x64x64.size a ≤ S1x256x64x128.size a
  slices_S32768x64_o20032_0_S64x64 : S32768x64.Slices ![20032, 0] S64x64
  inb_S1x256x64x128_S1x1x64x64_0_156_0_64 : ∀ a, (![0, 156, 0, 64] : Fin 4 → Nat) a + S1x1x64x64.size a ≤ S1x256x64x128.size a
  slices_S32768x64_o20096_0_S64x64 : S32768x64.Slices ![20096, 0] S64x64
  inb_S1x256x64x128_S1x1x64x64_0_157_0_0 : ∀ a, (![0, 157, 0, 0] : Fin 4 → Nat) a + S1x1x64x64.size a ≤ S1x256x64x128.size a
  slices_S32768x64_o20160_0_S64x64 : S32768x64.Slices ![20160, 0] S64x64
  inb_S1x256x64x128_S1x1x64x64_0_157_0_64 : ∀ a, (![0, 157, 0, 64] : Fin 4 → Nat) a + S1x1x64x64.size a ≤ S1x256x64x128.size a
  slices_S32768x64_o20224_0_S64x64 : S32768x64.Slices ![20224, 0] S64x64
  inb_S1x256x64x128_S1x1x64x64_0_158_0_0 : ∀ a, (![0, 158, 0, 0] : Fin 4 → Nat) a + S1x1x64x64.size a ≤ S1x256x64x128.size a
  slices_S32768x64_o20288_0_S64x64 : S32768x64.Slices ![20288, 0] S64x64
  inb_S1x256x64x128_S1x1x64x64_0_158_0_64 : ∀ a, (![0, 158, 0, 64] : Fin 4 → Nat) a + S1x1x64x64.size a ≤ S1x256x64x128.size a
  slices_S32768x64_o20352_0_S64x64 : S32768x64.Slices ![20352, 0] S64x64
  inb_S1x256x64x128_S1x1x64x64_0_159_0_0 : ∀ a, (![0, 159, 0, 0] : Fin 4 → Nat) a + S1x1x64x64.size a ≤ S1x256x64x128.size a
  slices_S32768x64_o20416_0_S64x64 : S32768x64.Slices ![20416, 0] S64x64
  inb_S1x256x64x128_S1x1x64x64_0_159_0_64 : ∀ a, (![0, 159, 0, 64] : Fin 4 → Nat) a + S1x1x64x64.size a ≤ S1x256x64x128.size a
  slices_S32768x64_o20480_0_S64x64 : S32768x64.Slices ![20480, 0] S64x64
  inb_S1x256x64x128_S1x1x64x64_0_160_0_0 : ∀ a, (![0, 160, 0, 0] : Fin 4 → Nat) a + S1x1x64x64.size a ≤ S1x256x64x128.size a
  slices_S32768x64_o20544_0_S64x64 : S32768x64.Slices ![20544, 0] S64x64
  inb_S1x256x64x128_S1x1x64x64_0_160_0_64 : ∀ a, (![0, 160, 0, 64] : Fin 4 → Nat) a + S1x1x64x64.size a ≤ S1x256x64x128.size a
  slices_S32768x64_o20608_0_S64x64 : S32768x64.Slices ![20608, 0] S64x64
  inb_S1x256x64x128_S1x1x64x64_0_161_0_0 : ∀ a, (![0, 161, 0, 0] : Fin 4 → Nat) a + S1x1x64x64.size a ≤ S1x256x64x128.size a
  slices_S32768x64_o20672_0_S64x64 : S32768x64.Slices ![20672, 0] S64x64
  inb_S1x256x64x128_S1x1x64x64_0_161_0_64 : ∀ a, (![0, 161, 0, 64] : Fin 4 → Nat) a + S1x1x64x64.size a ≤ S1x256x64x128.size a
  slices_S32768x64_o20736_0_S64x64 : S32768x64.Slices ![20736, 0] S64x64
  inb_S1x256x64x128_S1x1x64x64_0_162_0_0 : ∀ a, (![0, 162, 0, 0] : Fin 4 → Nat) a + S1x1x64x64.size a ≤ S1x256x64x128.size a
  slices_S32768x64_o20800_0_S64x64 : S32768x64.Slices ![20800, 0] S64x64
  inb_S1x256x64x128_S1x1x64x64_0_162_0_64 : ∀ a, (![0, 162, 0, 64] : Fin 4 → Nat) a + S1x1x64x64.size a ≤ S1x256x64x128.size a
  slices_S32768x64_o20864_0_S64x64 : S32768x64.Slices ![20864, 0] S64x64
  inb_S1x256x64x128_S1x1x64x64_0_163_0_0 : ∀ a, (![0, 163, 0, 0] : Fin 4 → Nat) a + S1x1x64x64.size a ≤ S1x256x64x128.size a
  slices_S32768x64_o20928_0_S64x64 : S32768x64.Slices ![20928, 0] S64x64
  inb_S1x256x64x128_S1x1x64x64_0_163_0_64 : ∀ a, (![0, 163, 0, 64] : Fin 4 → Nat) a + S1x1x64x64.size a ≤ S1x256x64x128.size a
  slices_S32768x64_o20992_0_S64x64 : S32768x64.Slices ![20992, 0] S64x64
  inb_S1x256x64x128_S1x1x64x64_0_164_0_0 : ∀ a, (![0, 164, 0, 0] : Fin 4 → Nat) a + S1x1x64x64.size a ≤ S1x256x64x128.size a
  slices_S32768x64_o21056_0_S64x64 : S32768x64.Slices ![21056, 0] S64x64
  inb_S1x256x64x128_S1x1x64x64_0_164_0_64 : ∀ a, (![0, 164, 0, 64] : Fin 4 → Nat) a + S1x1x64x64.size a ≤ S1x256x64x128.size a
  slices_S32768x64_o21120_0_S64x64 : S32768x64.Slices ![21120, 0] S64x64
  inb_S1x256x64x128_S1x1x64x64_0_165_0_0 : ∀ a, (![0, 165, 0, 0] : Fin 4 → Nat) a + S1x1x64x64.size a ≤ S1x256x64x128.size a
  slices_S32768x64_o21184_0_S64x64 : S32768x64.Slices ![21184, 0] S64x64
  inb_S1x256x64x128_S1x1x64x64_0_165_0_64 : ∀ a, (![0, 165, 0, 64] : Fin 4 → Nat) a + S1x1x64x64.size a ≤ S1x256x64x128.size a
  slices_S32768x64_o21248_0_S64x64 : S32768x64.Slices ![21248, 0] S64x64
  inb_S1x256x64x128_S1x1x64x64_0_166_0_0 : ∀ a, (![0, 166, 0, 0] : Fin 4 → Nat) a + S1x1x64x64.size a ≤ S1x256x64x128.size a
  slices_S32768x64_o21312_0_S64x64 : S32768x64.Slices ![21312, 0] S64x64
  inb_S1x256x64x128_S1x1x64x64_0_166_0_64 : ∀ a, (![0, 166, 0, 64] : Fin 4 → Nat) a + S1x1x64x64.size a ≤ S1x256x64x128.size a
  slices_S32768x64_o21376_0_S64x64 : S32768x64.Slices ![21376, 0] S64x64
  inb_S1x256x64x128_S1x1x64x64_0_167_0_0 : ∀ a, (![0, 167, 0, 0] : Fin 4 → Nat) a + S1x1x64x64.size a ≤ S1x256x64x128.size a
  slices_S32768x64_o21440_0_S64x64 : S32768x64.Slices ![21440, 0] S64x64
  inb_S1x256x64x128_S1x1x64x64_0_167_0_64 : ∀ a, (![0, 167, 0, 64] : Fin 4 → Nat) a + S1x1x64x64.size a ≤ S1x256x64x128.size a
  slices_S32768x64_o21504_0_S64x64 : S32768x64.Slices ![21504, 0] S64x64
  inb_S1x256x64x128_S1x1x64x64_0_168_0_0 : ∀ a, (![0, 168, 0, 0] : Fin 4 → Nat) a + S1x1x64x64.size a ≤ S1x256x64x128.size a
  slices_S32768x64_o21568_0_S64x64 : S32768x64.Slices ![21568, 0] S64x64
  inb_S1x256x64x128_S1x1x64x64_0_168_0_64 : ∀ a, (![0, 168, 0, 64] : Fin 4 → Nat) a + S1x1x64x64.size a ≤ S1x256x64x128.size a
  slices_S32768x64_o21632_0_S64x64 : S32768x64.Slices ![21632, 0] S64x64
  inb_S1x256x64x128_S1x1x64x64_0_169_0_0 : ∀ a, (![0, 169, 0, 0] : Fin 4 → Nat) a + S1x1x64x64.size a ≤ S1x256x64x128.size a
  slices_S32768x64_o21696_0_S64x64 : S32768x64.Slices ![21696, 0] S64x64
  inb_S1x256x64x128_S1x1x64x64_0_169_0_64 : ∀ a, (![0, 169, 0, 64] : Fin 4 → Nat) a + S1x1x64x64.size a ≤ S1x256x64x128.size a
  slices_S32768x64_o21760_0_S64x64 : S32768x64.Slices ![21760, 0] S64x64
  inb_S1x256x64x128_S1x1x64x64_0_170_0_0 : ∀ a, (![0, 170, 0, 0] : Fin 4 → Nat) a + S1x1x64x64.size a ≤ S1x256x64x128.size a
  slices_S32768x64_o21824_0_S64x64 : S32768x64.Slices ![21824, 0] S64x64
  inb_S1x256x64x128_S1x1x64x64_0_170_0_64 : ∀ a, (![0, 170, 0, 64] : Fin 4 → Nat) a + S1x1x64x64.size a ≤ S1x256x64x128.size a
  slices_S32768x64_o21888_0_S64x64 : S32768x64.Slices ![21888, 0] S64x64
  inb_S1x256x64x128_S1x1x64x64_0_171_0_0 : ∀ a, (![0, 171, 0, 0] : Fin 4 → Nat) a + S1x1x64x64.size a ≤ S1x256x64x128.size a
  slices_S32768x64_o21952_0_S64x64 : S32768x64.Slices ![21952, 0] S64x64
  inb_S1x256x64x128_S1x1x64x64_0_171_0_64 : ∀ a, (![0, 171, 0, 64] : Fin 4 → Nat) a + S1x1x64x64.size a ≤ S1x256x64x128.size a
  slices_S32768x64_o22016_0_S64x64 : S32768x64.Slices ![22016, 0] S64x64
  inb_S1x256x64x128_S1x1x64x64_0_172_0_0 : ∀ a, (![0, 172, 0, 0] : Fin 4 → Nat) a + S1x1x64x64.size a ≤ S1x256x64x128.size a
  slices_S32768x64_o22080_0_S64x64 : S32768x64.Slices ![22080, 0] S64x64
  inb_S1x256x64x128_S1x1x64x64_0_172_0_64 : ∀ a, (![0, 172, 0, 64] : Fin 4 → Nat) a + S1x1x64x64.size a ≤ S1x256x64x128.size a
  slices_S32768x64_o22144_0_S64x64 : S32768x64.Slices ![22144, 0] S64x64
  inb_S1x256x64x128_S1x1x64x64_0_173_0_0 : ∀ a, (![0, 173, 0, 0] : Fin 4 → Nat) a + S1x1x64x64.size a ≤ S1x256x64x128.size a
  slices_S32768x64_o22208_0_S64x64 : S32768x64.Slices ![22208, 0] S64x64
  inb_S1x256x64x128_S1x1x64x64_0_173_0_64 : ∀ a, (![0, 173, 0, 64] : Fin 4 → Nat) a + S1x1x64x64.size a ≤ S1x256x64x128.size a
  slices_S32768x64_o22272_0_S64x64 : S32768x64.Slices ![22272, 0] S64x64
  inb_S1x256x64x128_S1x1x64x64_0_174_0_0 : ∀ a, (![0, 174, 0, 0] : Fin 4 → Nat) a + S1x1x64x64.size a ≤ S1x256x64x128.size a
  slices_S32768x64_o22336_0_S64x64 : S32768x64.Slices ![22336, 0] S64x64
  inb_S1x256x64x128_S1x1x64x64_0_174_0_64 : ∀ a, (![0, 174, 0, 64] : Fin 4 → Nat) a + S1x1x64x64.size a ≤ S1x256x64x128.size a
  slices_S32768x64_o22400_0_S64x64 : S32768x64.Slices ![22400, 0] S64x64
  inb_S1x256x64x128_S1x1x64x64_0_175_0_0 : ∀ a, (![0, 175, 0, 0] : Fin 4 → Nat) a + S1x1x64x64.size a ≤ S1x256x64x128.size a
  slices_S32768x64_o22464_0_S64x64 : S32768x64.Slices ![22464, 0] S64x64
  inb_S1x256x64x128_S1x1x64x64_0_175_0_64 : ∀ a, (![0, 175, 0, 64] : Fin 4 → Nat) a + S1x1x64x64.size a ≤ S1x256x64x128.size a
  slices_S32768x64_o22528_0_S64x64 : S32768x64.Slices ![22528, 0] S64x64
  inb_S1x256x64x128_S1x1x64x64_0_176_0_0 : ∀ a, (![0, 176, 0, 0] : Fin 4 → Nat) a + S1x1x64x64.size a ≤ S1x256x64x128.size a
  slices_S32768x64_o22592_0_S64x64 : S32768x64.Slices ![22592, 0] S64x64
  inb_S1x256x64x128_S1x1x64x64_0_176_0_64 : ∀ a, (![0, 176, 0, 64] : Fin 4 → Nat) a + S1x1x64x64.size a ≤ S1x256x64x128.size a
  slices_S32768x64_o22656_0_S64x64 : S32768x64.Slices ![22656, 0] S64x64
  inb_S1x256x64x128_S1x1x64x64_0_177_0_0 : ∀ a, (![0, 177, 0, 0] : Fin 4 → Nat) a + S1x1x64x64.size a ≤ S1x256x64x128.size a
  slices_S32768x64_o22720_0_S64x64 : S32768x64.Slices ![22720, 0] S64x64
  inb_S1x256x64x128_S1x1x64x64_0_177_0_64 : ∀ a, (![0, 177, 0, 64] : Fin 4 → Nat) a + S1x1x64x64.size a ≤ S1x256x64x128.size a
  slices_S32768x64_o22784_0_S64x64 : S32768x64.Slices ![22784, 0] S64x64
  inb_S1x256x64x128_S1x1x64x64_0_178_0_0 : ∀ a, (![0, 178, 0, 0] : Fin 4 → Nat) a + S1x1x64x64.size a ≤ S1x256x64x128.size a
  slices_S32768x64_o22848_0_S64x64 : S32768x64.Slices ![22848, 0] S64x64
  inb_S1x256x64x128_S1x1x64x64_0_178_0_64 : ∀ a, (![0, 178, 0, 64] : Fin 4 → Nat) a + S1x1x64x64.size a ≤ S1x256x64x128.size a
  slices_S32768x64_o22912_0_S64x64 : S32768x64.Slices ![22912, 0] S64x64
  inb_S1x256x64x128_S1x1x64x64_0_179_0_0 : ∀ a, (![0, 179, 0, 0] : Fin 4 → Nat) a + S1x1x64x64.size a ≤ S1x256x64x128.size a
  slices_S32768x64_o22976_0_S64x64 : S32768x64.Slices ![22976, 0] S64x64
  inb_S1x256x64x128_S1x1x64x64_0_179_0_64 : ∀ a, (![0, 179, 0, 64] : Fin 4 → Nat) a + S1x1x64x64.size a ≤ S1x256x64x128.size a
  slices_S32768x64_o23040_0_S64x64 : S32768x64.Slices ![23040, 0] S64x64
  inb_S1x256x64x128_S1x1x64x64_0_180_0_0 : ∀ a, (![0, 180, 0, 0] : Fin 4 → Nat) a + S1x1x64x64.size a ≤ S1x256x64x128.size a
  slices_S32768x64_o23104_0_S64x64 : S32768x64.Slices ![23104, 0] S64x64
  inb_S1x256x64x128_S1x1x64x64_0_180_0_64 : ∀ a, (![0, 180, 0, 64] : Fin 4 → Nat) a + S1x1x64x64.size a ≤ S1x256x64x128.size a
  slices_S32768x64_o23168_0_S64x64 : S32768x64.Slices ![23168, 0] S64x64
  inb_S1x256x64x128_S1x1x64x64_0_181_0_0 : ∀ a, (![0, 181, 0, 0] : Fin 4 → Nat) a + S1x1x64x64.size a ≤ S1x256x64x128.size a
  slices_S32768x64_o23232_0_S64x64 : S32768x64.Slices ![23232, 0] S64x64
  inb_S1x256x64x128_S1x1x64x64_0_181_0_64 : ∀ a, (![0, 181, 0, 64] : Fin 4 → Nat) a + S1x1x64x64.size a ≤ S1x256x64x128.size a
  slices_S32768x64_o23296_0_S64x64 : S32768x64.Slices ![23296, 0] S64x64
  inb_S1x256x64x128_S1x1x64x64_0_182_0_0 : ∀ a, (![0, 182, 0, 0] : Fin 4 → Nat) a + S1x1x64x64.size a ≤ S1x256x64x128.size a
  slices_S32768x64_o23360_0_S64x64 : S32768x64.Slices ![23360, 0] S64x64
  inb_S1x256x64x128_S1x1x64x64_0_182_0_64 : ∀ a, (![0, 182, 0, 64] : Fin 4 → Nat) a + S1x1x64x64.size a ≤ S1x256x64x128.size a
  slices_S32768x64_o23424_0_S64x64 : S32768x64.Slices ![23424, 0] S64x64
  inb_S1x256x64x128_S1x1x64x64_0_183_0_0 : ∀ a, (![0, 183, 0, 0] : Fin 4 → Nat) a + S1x1x64x64.size a ≤ S1x256x64x128.size a
  slices_S32768x64_o23488_0_S64x64 : S32768x64.Slices ![23488, 0] S64x64
  inb_S1x256x64x128_S1x1x64x64_0_183_0_64 : ∀ a, (![0, 183, 0, 64] : Fin 4 → Nat) a + S1x1x64x64.size a ≤ S1x256x64x128.size a
  slices_S32768x64_o23552_0_S64x64 : S32768x64.Slices ![23552, 0] S64x64
  inb_S1x256x64x128_S1x1x64x64_0_184_0_0 : ∀ a, (![0, 184, 0, 0] : Fin 4 → Nat) a + S1x1x64x64.size a ≤ S1x256x64x128.size a
  slices_S32768x64_o23616_0_S64x64 : S32768x64.Slices ![23616, 0] S64x64
  inb_S1x256x64x128_S1x1x64x64_0_184_0_64 : ∀ a, (![0, 184, 0, 64] : Fin 4 → Nat) a + S1x1x64x64.size a ≤ S1x256x64x128.size a
  slices_S32768x64_o23680_0_S64x64 : S32768x64.Slices ![23680, 0] S64x64
  inb_S1x256x64x128_S1x1x64x64_0_185_0_0 : ∀ a, (![0, 185, 0, 0] : Fin 4 → Nat) a + S1x1x64x64.size a ≤ S1x256x64x128.size a
  slices_S32768x64_o23744_0_S64x64 : S32768x64.Slices ![23744, 0] S64x64
  inb_S1x256x64x128_S1x1x64x64_0_185_0_64 : ∀ a, (![0, 185, 0, 64] : Fin 4 → Nat) a + S1x1x64x64.size a ≤ S1x256x64x128.size a
  slices_S32768x64_o23808_0_S64x64 : S32768x64.Slices ![23808, 0] S64x64
  inb_S1x256x64x128_S1x1x64x64_0_186_0_0 : ∀ a, (![0, 186, 0, 0] : Fin 4 → Nat) a + S1x1x64x64.size a ≤ S1x256x64x128.size a
  slices_S32768x64_o23872_0_S64x64 : S32768x64.Slices ![23872, 0] S64x64
  inb_S1x256x64x128_S1x1x64x64_0_186_0_64 : ∀ a, (![0, 186, 0, 64] : Fin 4 → Nat) a + S1x1x64x64.size a ≤ S1x256x64x128.size a
  slices_S32768x64_o23936_0_S64x64 : S32768x64.Slices ![23936, 0] S64x64
  inb_S1x256x64x128_S1x1x64x64_0_187_0_0 : ∀ a, (![0, 187, 0, 0] : Fin 4 → Nat) a + S1x1x64x64.size a ≤ S1x256x64x128.size a
  slices_S32768x64_o24000_0_S64x64 : S32768x64.Slices ![24000, 0] S64x64
  inb_S1x256x64x128_S1x1x64x64_0_187_0_64 : ∀ a, (![0, 187, 0, 64] : Fin 4 → Nat) a + S1x1x64x64.size a ≤ S1x256x64x128.size a
  slices_S32768x64_o24064_0_S64x64 : S32768x64.Slices ![24064, 0] S64x64
  inb_S1x256x64x128_S1x1x64x64_0_188_0_0 : ∀ a, (![0, 188, 0, 0] : Fin 4 → Nat) a + S1x1x64x64.size a ≤ S1x256x64x128.size a
  slices_S32768x64_o24128_0_S64x64 : S32768x64.Slices ![24128, 0] S64x64
  inb_S1x256x64x128_S1x1x64x64_0_188_0_64 : ∀ a, (![0, 188, 0, 64] : Fin 4 → Nat) a + S1x1x64x64.size a ≤ S1x256x64x128.size a
  slices_S32768x64_o24192_0_S64x64 : S32768x64.Slices ![24192, 0] S64x64
  inb_S1x256x64x128_S1x1x64x64_0_189_0_0 : ∀ a, (![0, 189, 0, 0] : Fin 4 → Nat) a + S1x1x64x64.size a ≤ S1x256x64x128.size a
  slices_S32768x64_o24256_0_S64x64 : S32768x64.Slices ![24256, 0] S64x64
  inb_S1x256x64x128_S1x1x64x64_0_189_0_64 : ∀ a, (![0, 189, 0, 64] : Fin 4 → Nat) a + S1x1x64x64.size a ≤ S1x256x64x128.size a
  slices_S32768x64_o24320_0_S64x64 : S32768x64.Slices ![24320, 0] S64x64
  inb_S1x256x64x128_S1x1x64x64_0_190_0_0 : ∀ a, (![0, 190, 0, 0] : Fin 4 → Nat) a + S1x1x64x64.size a ≤ S1x256x64x128.size a
  slices_S32768x64_o24384_0_S64x64 : S32768x64.Slices ![24384, 0] S64x64
  inb_S1x256x64x128_S1x1x64x64_0_190_0_64 : ∀ a, (![0, 190, 0, 64] : Fin 4 → Nat) a + S1x1x64x64.size a ≤ S1x256x64x128.size a
  slices_S32768x64_o24448_0_S64x64 : S32768x64.Slices ![24448, 0] S64x64
  inb_S1x256x64x128_S1x1x64x64_0_191_0_0 : ∀ a, (![0, 191, 0, 0] : Fin 4 → Nat) a + S1x1x64x64.size a ≤ S1x256x64x128.size a
  slices_S32768x64_o24512_0_S64x64 : S32768x64.Slices ![24512, 0] S64x64
  inb_S1x256x64x128_S1x1x64x64_0_191_0_64 : ∀ a, (![0, 191, 0, 64] : Fin 4 → Nat) a + S1x1x64x64.size a ≤ S1x256x64x128.size a
  slices_S32768x64_o24576_0_S64x64 : S32768x64.Slices ![24576, 0] S64x64
  inb_S1x256x64x128_S1x1x64x64_0_192_0_0 : ∀ a, (![0, 192, 0, 0] : Fin 4 → Nat) a + S1x1x64x64.size a ≤ S1x256x64x128.size a
  slices_S32768x64_o24640_0_S64x64 : S32768x64.Slices ![24640, 0] S64x64
  inb_S1x256x64x128_S1x1x64x64_0_192_0_64 : ∀ a, (![0, 192, 0, 64] : Fin 4 → Nat) a + S1x1x64x64.size a ≤ S1x256x64x128.size a
  slices_S32768x64_o24704_0_S64x64 : S32768x64.Slices ![24704, 0] S64x64
  inb_S1x256x64x128_S1x1x64x64_0_193_0_0 : ∀ a, (![0, 193, 0, 0] : Fin 4 → Nat) a + S1x1x64x64.size a ≤ S1x256x64x128.size a
  slices_S32768x64_o24768_0_S64x64 : S32768x64.Slices ![24768, 0] S64x64
  inb_S1x256x64x128_S1x1x64x64_0_193_0_64 : ∀ a, (![0, 193, 0, 64] : Fin 4 → Nat) a + S1x1x64x64.size a ≤ S1x256x64x128.size a
  slices_S32768x64_o24832_0_S64x64 : S32768x64.Slices ![24832, 0] S64x64
  inb_S1x256x64x128_S1x1x64x64_0_194_0_0 : ∀ a, (![0, 194, 0, 0] : Fin 4 → Nat) a + S1x1x64x64.size a ≤ S1x256x64x128.size a
  slices_S32768x64_o24896_0_S64x64 : S32768x64.Slices ![24896, 0] S64x64
  inb_S1x256x64x128_S1x1x64x64_0_194_0_64 : ∀ a, (![0, 194, 0, 64] : Fin 4 → Nat) a + S1x1x64x64.size a ≤ S1x256x64x128.size a
  slices_S32768x64_o24960_0_S64x64 : S32768x64.Slices ![24960, 0] S64x64
  inb_S1x256x64x128_S1x1x64x64_0_195_0_0 : ∀ a, (![0, 195, 0, 0] : Fin 4 → Nat) a + S1x1x64x64.size a ≤ S1x256x64x128.size a
  slices_S32768x64_o25024_0_S64x64 : S32768x64.Slices ![25024, 0] S64x64
  inb_S1x256x64x128_S1x1x64x64_0_195_0_64 : ∀ a, (![0, 195, 0, 64] : Fin 4 → Nat) a + S1x1x64x64.size a ≤ S1x256x64x128.size a
  slices_S32768x64_o25088_0_S64x64 : S32768x64.Slices ![25088, 0] S64x64
  inb_S1x256x64x128_S1x1x64x64_0_196_0_0 : ∀ a, (![0, 196, 0, 0] : Fin 4 → Nat) a + S1x1x64x64.size a ≤ S1x256x64x128.size a
  slices_S32768x64_o25152_0_S64x64 : S32768x64.Slices ![25152, 0] S64x64
  inb_S1x256x64x128_S1x1x64x64_0_196_0_64 : ∀ a, (![0, 196, 0, 64] : Fin 4 → Nat) a + S1x1x64x64.size a ≤ S1x256x64x128.size a
  slices_S32768x64_o25216_0_S64x64 : S32768x64.Slices ![25216, 0] S64x64
  inb_S1x256x64x128_S1x1x64x64_0_197_0_0 : ∀ a, (![0, 197, 0, 0] : Fin 4 → Nat) a + S1x1x64x64.size a ≤ S1x256x64x128.size a
  slices_S32768x64_o25280_0_S64x64 : S32768x64.Slices ![25280, 0] S64x64
  inb_S1x256x64x128_S1x1x64x64_0_197_0_64 : ∀ a, (![0, 197, 0, 64] : Fin 4 → Nat) a + S1x1x64x64.size a ≤ S1x256x64x128.size a
  slices_S32768x64_o25344_0_S64x64 : S32768x64.Slices ![25344, 0] S64x64
  inb_S1x256x64x128_S1x1x64x64_0_198_0_0 : ∀ a, (![0, 198, 0, 0] : Fin 4 → Nat) a + S1x1x64x64.size a ≤ S1x256x64x128.size a
  slices_S32768x64_o25408_0_S64x64 : S32768x64.Slices ![25408, 0] S64x64
  inb_S1x256x64x128_S1x1x64x64_0_198_0_64 : ∀ a, (![0, 198, 0, 64] : Fin 4 → Nat) a + S1x1x64x64.size a ≤ S1x256x64x128.size a
  slices_S32768x64_o25472_0_S64x64 : S32768x64.Slices ![25472, 0] S64x64
  inb_S1x256x64x128_S1x1x64x64_0_199_0_0 : ∀ a, (![0, 199, 0, 0] : Fin 4 → Nat) a + S1x1x64x64.size a ≤ S1x256x64x128.size a
  slices_S32768x64_o25536_0_S64x64 : S32768x64.Slices ![25536, 0] S64x64
  inb_S1x256x64x128_S1x1x64x64_0_199_0_64 : ∀ a, (![0, 199, 0, 64] : Fin 4 → Nat) a + S1x1x64x64.size a ≤ S1x256x64x128.size a
  slices_S32768x64_o25600_0_S64x64 : S32768x64.Slices ![25600, 0] S64x64
  inb_S1x256x64x128_S1x1x64x64_0_200_0_0 : ∀ a, (![0, 200, 0, 0] : Fin 4 → Nat) a + S1x1x64x64.size a ≤ S1x256x64x128.size a
  slices_S32768x64_o25664_0_S64x64 : S32768x64.Slices ![25664, 0] S64x64
  inb_S1x256x64x128_S1x1x64x64_0_200_0_64 : ∀ a, (![0, 200, 0, 64] : Fin 4 → Nat) a + S1x1x64x64.size a ≤ S1x256x64x128.size a
  slices_S32768x64_o25728_0_S64x64 : S32768x64.Slices ![25728, 0] S64x64
  inb_S1x256x64x128_S1x1x64x64_0_201_0_0 : ∀ a, (![0, 201, 0, 0] : Fin 4 → Nat) a + S1x1x64x64.size a ≤ S1x256x64x128.size a
  slices_S32768x64_o25792_0_S64x64 : S32768x64.Slices ![25792, 0] S64x64
  inb_S1x256x64x128_S1x1x64x64_0_201_0_64 : ∀ a, (![0, 201, 0, 64] : Fin 4 → Nat) a + S1x1x64x64.size a ≤ S1x256x64x128.size a
  slices_S32768x64_o25856_0_S64x64 : S32768x64.Slices ![25856, 0] S64x64
  inb_S1x256x64x128_S1x1x64x64_0_202_0_0 : ∀ a, (![0, 202, 0, 0] : Fin 4 → Nat) a + S1x1x64x64.size a ≤ S1x256x64x128.size a
  slices_S32768x64_o25920_0_S64x64 : S32768x64.Slices ![25920, 0] S64x64
  inb_S1x256x64x128_S1x1x64x64_0_202_0_64 : ∀ a, (![0, 202, 0, 64] : Fin 4 → Nat) a + S1x1x64x64.size a ≤ S1x256x64x128.size a
  slices_S32768x64_o25984_0_S64x64 : S32768x64.Slices ![25984, 0] S64x64
  inb_S1x256x64x128_S1x1x64x64_0_203_0_0 : ∀ a, (![0, 203, 0, 0] : Fin 4 → Nat) a + S1x1x64x64.size a ≤ S1x256x64x128.size a
  slices_S32768x64_o26048_0_S64x64 : S32768x64.Slices ![26048, 0] S64x64
  inb_S1x256x64x128_S1x1x64x64_0_203_0_64 : ∀ a, (![0, 203, 0, 64] : Fin 4 → Nat) a + S1x1x64x64.size a ≤ S1x256x64x128.size a
  slices_S32768x64_o26112_0_S64x64 : S32768x64.Slices ![26112, 0] S64x64
  inb_S1x256x64x128_S1x1x64x64_0_204_0_0 : ∀ a, (![0, 204, 0, 0] : Fin 4 → Nat) a + S1x1x64x64.size a ≤ S1x256x64x128.size a
  slices_S32768x64_o26176_0_S64x64 : S32768x64.Slices ![26176, 0] S64x64
  inb_S1x256x64x128_S1x1x64x64_0_204_0_64 : ∀ a, (![0, 204, 0, 64] : Fin 4 → Nat) a + S1x1x64x64.size a ≤ S1x256x64x128.size a
  slices_S32768x64_o26240_0_S64x64 : S32768x64.Slices ![26240, 0] S64x64
  inb_S1x256x64x128_S1x1x64x64_0_205_0_0 : ∀ a, (![0, 205, 0, 0] : Fin 4 → Nat) a + S1x1x64x64.size a ≤ S1x256x64x128.size a
  slices_S32768x64_o26304_0_S64x64 : S32768x64.Slices ![26304, 0] S64x64
  inb_S1x256x64x128_S1x1x64x64_0_205_0_64 : ∀ a, (![0, 205, 0, 64] : Fin 4 → Nat) a + S1x1x64x64.size a ≤ S1x256x64x128.size a
  slices_S32768x64_o26368_0_S64x64 : S32768x64.Slices ![26368, 0] S64x64
  inb_S1x256x64x128_S1x1x64x64_0_206_0_0 : ∀ a, (![0, 206, 0, 0] : Fin 4 → Nat) a + S1x1x64x64.size a ≤ S1x256x64x128.size a
  slices_S32768x64_o26432_0_S64x64 : S32768x64.Slices ![26432, 0] S64x64
  inb_S1x256x64x128_S1x1x64x64_0_206_0_64 : ∀ a, (![0, 206, 0, 64] : Fin 4 → Nat) a + S1x1x64x64.size a ≤ S1x256x64x128.size a
  slices_S32768x64_o26496_0_S64x64 : S32768x64.Slices ![26496, 0] S64x64
  inb_S1x256x64x128_S1x1x64x64_0_207_0_0 : ∀ a, (![0, 207, 0, 0] : Fin 4 → Nat) a + S1x1x64x64.size a ≤ S1x256x64x128.size a
  slices_S32768x64_o26560_0_S64x64 : S32768x64.Slices ![26560, 0] S64x64
  inb_S1x256x64x128_S1x1x64x64_0_207_0_64 : ∀ a, (![0, 207, 0, 64] : Fin 4 → Nat) a + S1x1x64x64.size a ≤ S1x256x64x128.size a
  slices_S32768x64_o26624_0_S64x64 : S32768x64.Slices ![26624, 0] S64x64
  inb_S1x256x64x128_S1x1x64x64_0_208_0_0 : ∀ a, (![0, 208, 0, 0] : Fin 4 → Nat) a + S1x1x64x64.size a ≤ S1x256x64x128.size a
  slices_S32768x64_o26688_0_S64x64 : S32768x64.Slices ![26688, 0] S64x64
  inb_S1x256x64x128_S1x1x64x64_0_208_0_64 : ∀ a, (![0, 208, 0, 64] : Fin 4 → Nat) a + S1x1x64x64.size a ≤ S1x256x64x128.size a
  slices_S32768x64_o26752_0_S64x64 : S32768x64.Slices ![26752, 0] S64x64
  inb_S1x256x64x128_S1x1x64x64_0_209_0_0 : ∀ a, (![0, 209, 0, 0] : Fin 4 → Nat) a + S1x1x64x64.size a ≤ S1x256x64x128.size a
  slices_S32768x64_o26816_0_S64x64 : S32768x64.Slices ![26816, 0] S64x64
  inb_S1x256x64x128_S1x1x64x64_0_209_0_64 : ∀ a, (![0, 209, 0, 64] : Fin 4 → Nat) a + S1x1x64x64.size a ≤ S1x256x64x128.size a
  slices_S32768x64_o26880_0_S64x64 : S32768x64.Slices ![26880, 0] S64x64
  inb_S1x256x64x128_S1x1x64x64_0_210_0_0 : ∀ a, (![0, 210, 0, 0] : Fin 4 → Nat) a + S1x1x64x64.size a ≤ S1x256x64x128.size a
  slices_S32768x64_o26944_0_S64x64 : S32768x64.Slices ![26944, 0] S64x64
  inb_S1x256x64x128_S1x1x64x64_0_210_0_64 : ∀ a, (![0, 210, 0, 64] : Fin 4 → Nat) a + S1x1x64x64.size a ≤ S1x256x64x128.size a
  slices_S32768x64_o27008_0_S64x64 : S32768x64.Slices ![27008, 0] S64x64
  inb_S1x256x64x128_S1x1x64x64_0_211_0_0 : ∀ a, (![0, 211, 0, 0] : Fin 4 → Nat) a + S1x1x64x64.size a ≤ S1x256x64x128.size a
  slices_S32768x64_o27072_0_S64x64 : S32768x64.Slices ![27072, 0] S64x64
  inb_S1x256x64x128_S1x1x64x64_0_211_0_64 : ∀ a, (![0, 211, 0, 64] : Fin 4 → Nat) a + S1x1x64x64.size a ≤ S1x256x64x128.size a
  slices_S32768x64_o27136_0_S64x64 : S32768x64.Slices ![27136, 0] S64x64
  inb_S1x256x64x128_S1x1x64x64_0_212_0_0 : ∀ a, (![0, 212, 0, 0] : Fin 4 → Nat) a + S1x1x64x64.size a ≤ S1x256x64x128.size a
  slices_S32768x64_o27200_0_S64x64 : S32768x64.Slices ![27200, 0] S64x64
  inb_S1x256x64x128_S1x1x64x64_0_212_0_64 : ∀ a, (![0, 212, 0, 64] : Fin 4 → Nat) a + S1x1x64x64.size a ≤ S1x256x64x128.size a
  slices_S32768x64_o27264_0_S64x64 : S32768x64.Slices ![27264, 0] S64x64
  inb_S1x256x64x128_S1x1x64x64_0_213_0_0 : ∀ a, (![0, 213, 0, 0] : Fin 4 → Nat) a + S1x1x64x64.size a ≤ S1x256x64x128.size a
  slices_S32768x64_o27328_0_S64x64 : S32768x64.Slices ![27328, 0] S64x64
  inb_S1x256x64x128_S1x1x64x64_0_213_0_64 : ∀ a, (![0, 213, 0, 64] : Fin 4 → Nat) a + S1x1x64x64.size a ≤ S1x256x64x128.size a
  slices_S32768x64_o27392_0_S64x64 : S32768x64.Slices ![27392, 0] S64x64
  inb_S1x256x64x128_S1x1x64x64_0_214_0_0 : ∀ a, (![0, 214, 0, 0] : Fin 4 → Nat) a + S1x1x64x64.size a ≤ S1x256x64x128.size a
  slices_S32768x64_o27456_0_S64x64 : S32768x64.Slices ![27456, 0] S64x64
  inb_S1x256x64x128_S1x1x64x64_0_214_0_64 : ∀ a, (![0, 214, 0, 64] : Fin 4 → Nat) a + S1x1x64x64.size a ≤ S1x256x64x128.size a
  slices_S32768x64_o27520_0_S64x64 : S32768x64.Slices ![27520, 0] S64x64
  inb_S1x256x64x128_S1x1x64x64_0_215_0_0 : ∀ a, (![0, 215, 0, 0] : Fin 4 → Nat) a + S1x1x64x64.size a ≤ S1x256x64x128.size a
  slices_S32768x64_o27584_0_S64x64 : S32768x64.Slices ![27584, 0] S64x64
  inb_S1x256x64x128_S1x1x64x64_0_215_0_64 : ∀ a, (![0, 215, 0, 64] : Fin 4 → Nat) a + S1x1x64x64.size a ≤ S1x256x64x128.size a
  slices_S32768x64_o27648_0_S64x64 : S32768x64.Slices ![27648, 0] S64x64
  inb_S1x256x64x128_S1x1x64x64_0_216_0_0 : ∀ a, (![0, 216, 0, 0] : Fin 4 → Nat) a + S1x1x64x64.size a ≤ S1x256x64x128.size a
  slices_S32768x64_o27712_0_S64x64 : S32768x64.Slices ![27712, 0] S64x64
  inb_S1x256x64x128_S1x1x64x64_0_216_0_64 : ∀ a, (![0, 216, 0, 64] : Fin 4 → Nat) a + S1x1x64x64.size a ≤ S1x256x64x128.size a
  slices_S32768x64_o27776_0_S64x64 : S32768x64.Slices ![27776, 0] S64x64
  inb_S1x256x64x128_S1x1x64x64_0_217_0_0 : ∀ a, (![0, 217, 0, 0] : Fin 4 → Nat) a + S1x1x64x64.size a ≤ S1x256x64x128.size a
  slices_S32768x64_o27840_0_S64x64 : S32768x64.Slices ![27840, 0] S64x64
  inb_S1x256x64x128_S1x1x64x64_0_217_0_64 : ∀ a, (![0, 217, 0, 64] : Fin 4 → Nat) a + S1x1x64x64.size a ≤ S1x256x64x128.size a
  slices_S32768x64_o27904_0_S64x64 : S32768x64.Slices ![27904, 0] S64x64
  inb_S1x256x64x128_S1x1x64x64_0_218_0_0 : ∀ a, (![0, 218, 0, 0] : Fin 4 → Nat) a + S1x1x64x64.size a ≤ S1x256x64x128.size a
  slices_S32768x64_o27968_0_S64x64 : S32768x64.Slices ![27968, 0] S64x64
  inb_S1x256x64x128_S1x1x64x64_0_218_0_64 : ∀ a, (![0, 218, 0, 64] : Fin 4 → Nat) a + S1x1x64x64.size a ≤ S1x256x64x128.size a
  slices_S32768x64_o28032_0_S64x64 : S32768x64.Slices ![28032, 0] S64x64
  inb_S1x256x64x128_S1x1x64x64_0_219_0_0 : ∀ a, (![0, 219, 0, 0] : Fin 4 → Nat) a + S1x1x64x64.size a ≤ S1x256x64x128.size a
  slices_S32768x64_o28096_0_S64x64 : S32768x64.Slices ![28096, 0] S64x64
  inb_S1x256x64x128_S1x1x64x64_0_219_0_64 : ∀ a, (![0, 219, 0, 64] : Fin 4 → Nat) a + S1x1x64x64.size a ≤ S1x256x64x128.size a
  slices_S32768x64_o28160_0_S64x64 : S32768x64.Slices ![28160, 0] S64x64
  inb_S1x256x64x128_S1x1x64x64_0_220_0_0 : ∀ a, (![0, 220, 0, 0] : Fin 4 → Nat) a + S1x1x64x64.size a ≤ S1x256x64x128.size a
  slices_S32768x64_o28224_0_S64x64 : S32768x64.Slices ![28224, 0] S64x64
  inb_S1x256x64x128_S1x1x64x64_0_220_0_64 : ∀ a, (![0, 220, 0, 64] : Fin 4 → Nat) a + S1x1x64x64.size a ≤ S1x256x64x128.size a
  slices_S32768x64_o28288_0_S64x64 : S32768x64.Slices ![28288, 0] S64x64
  inb_S1x256x64x128_S1x1x64x64_0_221_0_0 : ∀ a, (![0, 221, 0, 0] : Fin 4 → Nat) a + S1x1x64x64.size a ≤ S1x256x64x128.size a
  slices_S32768x64_o28352_0_S64x64 : S32768x64.Slices ![28352, 0] S64x64
  inb_S1x256x64x128_S1x1x64x64_0_221_0_64 : ∀ a, (![0, 221, 0, 64] : Fin 4 → Nat) a + S1x1x64x64.size a ≤ S1x256x64x128.size a
  slices_S32768x64_o28416_0_S64x64 : S32768x64.Slices ![28416, 0] S64x64
  inb_S1x256x64x128_S1x1x64x64_0_222_0_0 : ∀ a, (![0, 222, 0, 0] : Fin 4 → Nat) a + S1x1x64x64.size a ≤ S1x256x64x128.size a
  slices_S32768x64_o28480_0_S64x64 : S32768x64.Slices ![28480, 0] S64x64
  inb_S1x256x64x128_S1x1x64x64_0_222_0_64 : ∀ a, (![0, 222, 0, 64] : Fin 4 → Nat) a + S1x1x64x64.size a ≤ S1x256x64x128.size a
  slices_S32768x64_o28544_0_S64x64 : S32768x64.Slices ![28544, 0] S64x64
  inb_S1x256x64x128_S1x1x64x64_0_223_0_0 : ∀ a, (![0, 223, 0, 0] : Fin 4 → Nat) a + S1x1x64x64.size a ≤ S1x256x64x128.size a
  slices_S32768x64_o28608_0_S64x64 : S32768x64.Slices ![28608, 0] S64x64
  inb_S1x256x64x128_S1x1x64x64_0_223_0_64 : ∀ a, (![0, 223, 0, 64] : Fin 4 → Nat) a + S1x1x64x64.size a ≤ S1x256x64x128.size a
  slices_S32768x64_o28672_0_S64x64 : S32768x64.Slices ![28672, 0] S64x64
  inb_S1x256x64x128_S1x1x64x64_0_224_0_0 : ∀ a, (![0, 224, 0, 0] : Fin 4 → Nat) a + S1x1x64x64.size a ≤ S1x256x64x128.size a
  slices_S32768x64_o28736_0_S64x64 : S32768x64.Slices ![28736, 0] S64x64
  inb_S1x256x64x128_S1x1x64x64_0_224_0_64 : ∀ a, (![0, 224, 0, 64] : Fin 4 → Nat) a + S1x1x64x64.size a ≤ S1x256x64x128.size a
  slices_S32768x64_o28800_0_S64x64 : S32768x64.Slices ![28800, 0] S64x64
  inb_S1x256x64x128_S1x1x64x64_0_225_0_0 : ∀ a, (![0, 225, 0, 0] : Fin 4 → Nat) a + S1x1x64x64.size a ≤ S1x256x64x128.size a
  slices_S32768x64_o28864_0_S64x64 : S32768x64.Slices ![28864, 0] S64x64
  inb_S1x256x64x128_S1x1x64x64_0_225_0_64 : ∀ a, (![0, 225, 0, 64] : Fin 4 → Nat) a + S1x1x64x64.size a ≤ S1x256x64x128.size a
  slices_S32768x64_o28928_0_S64x64 : S32768x64.Slices ![28928, 0] S64x64
  inb_S1x256x64x128_S1x1x64x64_0_226_0_0 : ∀ a, (![0, 226, 0, 0] : Fin 4 → Nat) a + S1x1x64x64.size a ≤ S1x256x64x128.size a
  slices_S32768x64_o28992_0_S64x64 : S32768x64.Slices ![28992, 0] S64x64
  inb_S1x256x64x128_S1x1x64x64_0_226_0_64 : ∀ a, (![0, 226, 0, 64] : Fin 4 → Nat) a + S1x1x64x64.size a ≤ S1x256x64x128.size a
  slices_S32768x64_o29056_0_S64x64 : S32768x64.Slices ![29056, 0] S64x64
  inb_S1x256x64x128_S1x1x64x64_0_227_0_0 : ∀ a, (![0, 227, 0, 0] : Fin 4 → Nat) a + S1x1x64x64.size a ≤ S1x256x64x128.size a
  slices_S32768x64_o29120_0_S64x64 : S32768x64.Slices ![29120, 0] S64x64
  inb_S1x256x64x128_S1x1x64x64_0_227_0_64 : ∀ a, (![0, 227, 0, 64] : Fin 4 → Nat) a + S1x1x64x64.size a ≤ S1x256x64x128.size a
  slices_S32768x64_o29184_0_S64x64 : S32768x64.Slices ![29184, 0] S64x64
  inb_S1x256x64x128_S1x1x64x64_0_228_0_0 : ∀ a, (![0, 228, 0, 0] : Fin 4 → Nat) a + S1x1x64x64.size a ≤ S1x256x64x128.size a
  slices_S32768x64_o29248_0_S64x64 : S32768x64.Slices ![29248, 0] S64x64
  inb_S1x256x64x128_S1x1x64x64_0_228_0_64 : ∀ a, (![0, 228, 0, 64] : Fin 4 → Nat) a + S1x1x64x64.size a ≤ S1x256x64x128.size a
  slices_S32768x64_o29312_0_S64x64 : S32768x64.Slices ![29312, 0] S64x64
  inb_S1x256x64x128_S1x1x64x64_0_229_0_0 : ∀ a, (![0, 229, 0, 0] : Fin 4 → Nat) a + S1x1x64x64.size a ≤ S1x256x64x128.size a
  slices_S32768x64_o29376_0_S64x64 : S32768x64.Slices ![29376, 0] S64x64
  inb_S1x256x64x128_S1x1x64x64_0_229_0_64 : ∀ a, (![0, 229, 0, 64] : Fin 4 → Nat) a + S1x1x64x64.size a ≤ S1x256x64x128.size a
  slices_S32768x64_o29440_0_S64x64 : S32768x64.Slices ![29440, 0] S64x64
  inb_S1x256x64x128_S1x1x64x64_0_230_0_0 : ∀ a, (![0, 230, 0, 0] : Fin 4 → Nat) a + S1x1x64x64.size a ≤ S1x256x64x128.size a
  slices_S32768x64_o29504_0_S64x64 : S32768x64.Slices ![29504, 0] S64x64
  inb_S1x256x64x128_S1x1x64x64_0_230_0_64 : ∀ a, (![0, 230, 0, 64] : Fin 4 → Nat) a + S1x1x64x64.size a ≤ S1x256x64x128.size a
  slices_S32768x64_o29568_0_S64x64 : S32768x64.Slices ![29568, 0] S64x64
  inb_S1x256x64x128_S1x1x64x64_0_231_0_0 : ∀ a, (![0, 231, 0, 0] : Fin 4 → Nat) a + S1x1x64x64.size a ≤ S1x256x64x128.size a
  slices_S32768x64_o29632_0_S64x64 : S32768x64.Slices ![29632, 0] S64x64
  inb_S1x256x64x128_S1x1x64x64_0_231_0_64 : ∀ a, (![0, 231, 0, 64] : Fin 4 → Nat) a + S1x1x64x64.size a ≤ S1x256x64x128.size a
  slices_S32768x64_o29696_0_S64x64 : S32768x64.Slices ![29696, 0] S64x64
  inb_S1x256x64x128_S1x1x64x64_0_232_0_0 : ∀ a, (![0, 232, 0, 0] : Fin 4 → Nat) a + S1x1x64x64.size a ≤ S1x256x64x128.size a
  slices_S32768x64_o29760_0_S64x64 : S32768x64.Slices ![29760, 0] S64x64
  inb_S1x256x64x128_S1x1x64x64_0_232_0_64 : ∀ a, (![0, 232, 0, 64] : Fin 4 → Nat) a + S1x1x64x64.size a ≤ S1x256x64x128.size a
  slices_S32768x64_o29824_0_S64x64 : S32768x64.Slices ![29824, 0] S64x64
  inb_S1x256x64x128_S1x1x64x64_0_233_0_0 : ∀ a, (![0, 233, 0, 0] : Fin 4 → Nat) a + S1x1x64x64.size a ≤ S1x256x64x128.size a
  slices_S32768x64_o29888_0_S64x64 : S32768x64.Slices ![29888, 0] S64x64
  inb_S1x256x64x128_S1x1x64x64_0_233_0_64 : ∀ a, (![0, 233, 0, 64] : Fin 4 → Nat) a + S1x1x64x64.size a ≤ S1x256x64x128.size a
  slices_S32768x64_o29952_0_S64x64 : S32768x64.Slices ![29952, 0] S64x64
  inb_S1x256x64x128_S1x1x64x64_0_234_0_0 : ∀ a, (![0, 234, 0, 0] : Fin 4 → Nat) a + S1x1x64x64.size a ≤ S1x256x64x128.size a
  slices_S32768x64_o30016_0_S64x64 : S32768x64.Slices ![30016, 0] S64x64
  inb_S1x256x64x128_S1x1x64x64_0_234_0_64 : ∀ a, (![0, 234, 0, 64] : Fin 4 → Nat) a + S1x1x64x64.size a ≤ S1x256x64x128.size a
  slices_S32768x64_o30080_0_S64x64 : S32768x64.Slices ![30080, 0] S64x64
  inb_S1x256x64x128_S1x1x64x64_0_235_0_0 : ∀ a, (![0, 235, 0, 0] : Fin 4 → Nat) a + S1x1x64x64.size a ≤ S1x256x64x128.size a
  slices_S32768x64_o30144_0_S64x64 : S32768x64.Slices ![30144, 0] S64x64
  inb_S1x256x64x128_S1x1x64x64_0_235_0_64 : ∀ a, (![0, 235, 0, 64] : Fin 4 → Nat) a + S1x1x64x64.size a ≤ S1x256x64x128.size a
  slices_S32768x64_o30208_0_S64x64 : S32768x64.Slices ![30208, 0] S64x64
  inb_S1x256x64x128_S1x1x64x64_0_236_0_0 : ∀ a, (![0, 236, 0, 0] : Fin 4 → Nat) a + S1x1x64x64.size a ≤ S1x256x64x128.size a
  slices_S32768x64_o30272_0_S64x64 : S32768x64.Slices ![30272, 0] S64x64
  inb_S1x256x64x128_S1x1x64x64_0_236_0_64 : ∀ a, (![0, 236, 0, 64] : Fin 4 → Nat) a + S1x1x64x64.size a ≤ S1x256x64x128.size a
  slices_S32768x64_o30336_0_S64x64 : S32768x64.Slices ![30336, 0] S64x64
  inb_S1x256x64x128_S1x1x64x64_0_237_0_0 : ∀ a, (![0, 237, 0, 0] : Fin 4 → Nat) a + S1x1x64x64.size a ≤ S1x256x64x128.size a
  slices_S32768x64_o30400_0_S64x64 : S32768x64.Slices ![30400, 0] S64x64
  inb_S1x256x64x128_S1x1x64x64_0_237_0_64 : ∀ a, (![0, 237, 0, 64] : Fin 4 → Nat) a + S1x1x64x64.size a ≤ S1x256x64x128.size a
  slices_S32768x64_o30464_0_S64x64 : S32768x64.Slices ![30464, 0] S64x64
  inb_S1x256x64x128_S1x1x64x64_0_238_0_0 : ∀ a, (![0, 238, 0, 0] : Fin 4 → Nat) a + S1x1x64x64.size a ≤ S1x256x64x128.size a
  slices_S32768x64_o30528_0_S64x64 : S32768x64.Slices ![30528, 0] S64x64
  inb_S1x256x64x128_S1x1x64x64_0_238_0_64 : ∀ a, (![0, 238, 0, 64] : Fin 4 → Nat) a + S1x1x64x64.size a ≤ S1x256x64x128.size a
  slices_S32768x64_o30592_0_S64x64 : S32768x64.Slices ![30592, 0] S64x64
  inb_S1x256x64x128_S1x1x64x64_0_239_0_0 : ∀ a, (![0, 239, 0, 0] : Fin 4 → Nat) a + S1x1x64x64.size a ≤ S1x256x64x128.size a
  slices_S32768x64_o30656_0_S64x64 : S32768x64.Slices ![30656, 0] S64x64
  inb_S1x256x64x128_S1x1x64x64_0_239_0_64 : ∀ a, (![0, 239, 0, 64] : Fin 4 → Nat) a + S1x1x64x64.size a ≤ S1x256x64x128.size a
  slices_S32768x64_o30720_0_S64x64 : S32768x64.Slices ![30720, 0] S64x64
  inb_S1x256x64x128_S1x1x64x64_0_240_0_0 : ∀ a, (![0, 240, 0, 0] : Fin 4 → Nat) a + S1x1x64x64.size a ≤ S1x256x64x128.size a
  slices_S32768x64_o30784_0_S64x64 : S32768x64.Slices ![30784, 0] S64x64
  inb_S1x256x64x128_S1x1x64x64_0_240_0_64 : ∀ a, (![0, 240, 0, 64] : Fin 4 → Nat) a + S1x1x64x64.size a ≤ S1x256x64x128.size a
  slices_S32768x64_o30848_0_S64x64 : S32768x64.Slices ![30848, 0] S64x64
  inb_S1x256x64x128_S1x1x64x64_0_241_0_0 : ∀ a, (![0, 241, 0, 0] : Fin 4 → Nat) a + S1x1x64x64.size a ≤ S1x256x64x128.size a
  slices_S32768x64_o30912_0_S64x64 : S32768x64.Slices ![30912, 0] S64x64
  inb_S1x256x64x128_S1x1x64x64_0_241_0_64 : ∀ a, (![0, 241, 0, 64] : Fin 4 → Nat) a + S1x1x64x64.size a ≤ S1x256x64x128.size a
  slices_S32768x64_o30976_0_S64x64 : S32768x64.Slices ![30976, 0] S64x64
  inb_S1x256x64x128_S1x1x64x64_0_242_0_0 : ∀ a, (![0, 242, 0, 0] : Fin 4 → Nat) a + S1x1x64x64.size a ≤ S1x256x64x128.size a
  slices_S32768x64_o31040_0_S64x64 : S32768x64.Slices ![31040, 0] S64x64
  inb_S1x256x64x128_S1x1x64x64_0_242_0_64 : ∀ a, (![0, 242, 0, 64] : Fin 4 → Nat) a + S1x1x64x64.size a ≤ S1x256x64x128.size a
  slices_S32768x64_o31104_0_S64x64 : S32768x64.Slices ![31104, 0] S64x64
  inb_S1x256x64x128_S1x1x64x64_0_243_0_0 : ∀ a, (![0, 243, 0, 0] : Fin 4 → Nat) a + S1x1x64x64.size a ≤ S1x256x64x128.size a
  slices_S32768x64_o31168_0_S64x64 : S32768x64.Slices ![31168, 0] S64x64
  inb_S1x256x64x128_S1x1x64x64_0_243_0_64 : ∀ a, (![0, 243, 0, 64] : Fin 4 → Nat) a + S1x1x64x64.size a ≤ S1x256x64x128.size a
  slices_S32768x64_o31232_0_S64x64 : S32768x64.Slices ![31232, 0] S64x64
  inb_S1x256x64x128_S1x1x64x64_0_244_0_0 : ∀ a, (![0, 244, 0, 0] : Fin 4 → Nat) a + S1x1x64x64.size a ≤ S1x256x64x128.size a
  slices_S32768x64_o31296_0_S64x64 : S32768x64.Slices ![31296, 0] S64x64
  inb_S1x256x64x128_S1x1x64x64_0_244_0_64 : ∀ a, (![0, 244, 0, 64] : Fin 4 → Nat) a + S1x1x64x64.size a ≤ S1x256x64x128.size a
  slices_S32768x64_o31360_0_S64x64 : S32768x64.Slices ![31360, 0] S64x64
  inb_S1x256x64x128_S1x1x64x64_0_245_0_0 : ∀ a, (![0, 245, 0, 0] : Fin 4 → Nat) a + S1x1x64x64.size a ≤ S1x256x64x128.size a
  slices_S32768x64_o31424_0_S64x64 : S32768x64.Slices ![31424, 0] S64x64
  inb_S1x256x64x128_S1x1x64x64_0_245_0_64 : ∀ a, (![0, 245, 0, 64] : Fin 4 → Nat) a + S1x1x64x64.size a ≤ S1x256x64x128.size a
  slices_S32768x64_o31488_0_S64x64 : S32768x64.Slices ![31488, 0] S64x64
  inb_S1x256x64x128_S1x1x64x64_0_246_0_0 : ∀ a, (![0, 246, 0, 0] : Fin 4 → Nat) a + S1x1x64x64.size a ≤ S1x256x64x128.size a
  slices_S32768x64_o31552_0_S64x64 : S32768x64.Slices ![31552, 0] S64x64
  inb_S1x256x64x128_S1x1x64x64_0_246_0_64 : ∀ a, (![0, 246, 0, 64] : Fin 4 → Nat) a + S1x1x64x64.size a ≤ S1x256x64x128.size a
  slices_S32768x64_o31616_0_S64x64 : S32768x64.Slices ![31616, 0] S64x64
  inb_S1x256x64x128_S1x1x64x64_0_247_0_0 : ∀ a, (![0, 247, 0, 0] : Fin 4 → Nat) a + S1x1x64x64.size a ≤ S1x256x64x128.size a

class Shapes2.Facts₀ : Prop where
  slices_S32768x64_o31680_0_S64x64 : S32768x64.Slices ![31680, 0] S64x64
  inb_S1x256x64x128_S1x1x64x64_0_247_0_64 : ∀ a, (![0, 247, 0, 64] : Fin 4 → Nat) a + S1x1x64x64.size a ≤ S1x256x64x128.size a
  slices_S32768x64_o31744_0_S64x64 : S32768x64.Slices ![31744, 0] S64x64
  inb_S1x256x64x128_S1x1x64x64_0_248_0_0 : ∀ a, (![0, 248, 0, 0] : Fin 4 → Nat) a + S1x1x64x64.size a ≤ S1x256x64x128.size a
  slices_S32768x64_o31808_0_S64x64 : S32768x64.Slices ![31808, 0] S64x64
  inb_S1x256x64x128_S1x1x64x64_0_248_0_64 : ∀ a, (![0, 248, 0, 64] : Fin 4 → Nat) a + S1x1x64x64.size a ≤ S1x256x64x128.size a
  slices_S32768x64_o31872_0_S64x64 : S32768x64.Slices ![31872, 0] S64x64
  inb_S1x256x64x128_S1x1x64x64_0_249_0_0 : ∀ a, (![0, 249, 0, 0] : Fin 4 → Nat) a + S1x1x64x64.size a ≤ S1x256x64x128.size a
  slices_S32768x64_o31936_0_S64x64 : S32768x64.Slices ![31936, 0] S64x64
  inb_S1x256x64x128_S1x1x64x64_0_249_0_64 : ∀ a, (![0, 249, 0, 64] : Fin 4 → Nat) a + S1x1x64x64.size a ≤ S1x256x64x128.size a
  slices_S32768x64_o32000_0_S64x64 : S32768x64.Slices ![32000, 0] S64x64
  inb_S1x256x64x128_S1x1x64x64_0_250_0_0 : ∀ a, (![0, 250, 0, 0] : Fin 4 → Nat) a + S1x1x64x64.size a ≤ S1x256x64x128.size a
  slices_S32768x64_o32064_0_S64x64 : S32768x64.Slices ![32064, 0] S64x64
  inb_S1x256x64x128_S1x1x64x64_0_250_0_64 : ∀ a, (![0, 250, 0, 64] : Fin 4 → Nat) a + S1x1x64x64.size a ≤ S1x256x64x128.size a
  slices_S32768x64_o32128_0_S64x64 : S32768x64.Slices ![32128, 0] S64x64
  inb_S1x256x64x128_S1x1x64x64_0_251_0_0 : ∀ a, (![0, 251, 0, 0] : Fin 4 → Nat) a + S1x1x64x64.size a ≤ S1x256x64x128.size a
  slices_S32768x64_o32192_0_S64x64 : S32768x64.Slices ![32192, 0] S64x64
  inb_S1x256x64x128_S1x1x64x64_0_251_0_64 : ∀ a, (![0, 251, 0, 64] : Fin 4 → Nat) a + S1x1x64x64.size a ≤ S1x256x64x128.size a
  slices_S32768x64_o32256_0_S64x64 : S32768x64.Slices ![32256, 0] S64x64
  inb_S1x256x64x128_S1x1x64x64_0_252_0_0 : ∀ a, (![0, 252, 0, 0] : Fin 4 → Nat) a + S1x1x64x64.size a ≤ S1x256x64x128.size a
  slices_S32768x64_o32320_0_S64x64 : S32768x64.Slices ![32320, 0] S64x64
  inb_S1x256x64x128_S1x1x64x64_0_252_0_64 : ∀ a, (![0, 252, 0, 64] : Fin 4 → Nat) a + S1x1x64x64.size a ≤ S1x256x64x128.size a
  slices_S32768x64_o32384_0_S64x64 : S32768x64.Slices ![32384, 0] S64x64
  inb_S1x256x64x128_S1x1x64x64_0_253_0_0 : ∀ a, (![0, 253, 0, 0] : Fin 4 → Nat) a + S1x1x64x64.size a ≤ S1x256x64x128.size a
  slices_S32768x64_o32448_0_S64x64 : S32768x64.Slices ![32448, 0] S64x64
  inb_S1x256x64x128_S1x1x64x64_0_253_0_64 : ∀ a, (![0, 253, 0, 64] : Fin 4 → Nat) a + S1x1x64x64.size a ≤ S1x256x64x128.size a
  slices_S32768x64_o32512_0_S64x64 : S32768x64.Slices ![32512, 0] S64x64
  inb_S1x256x64x128_S1x1x64x64_0_254_0_0 : ∀ a, (![0, 254, 0, 0] : Fin 4 → Nat) a + S1x1x64x64.size a ≤ S1x256x64x128.size a
  slices_S32768x64_o32576_0_S64x64 : S32768x64.Slices ![32576, 0] S64x64
  inb_S1x256x64x128_S1x1x64x64_0_254_0_64 : ∀ a, (![0, 254, 0, 64] : Fin 4 → Nat) a + S1x1x64x64.size a ≤ S1x256x64x128.size a
  slices_S32768x64_o32640_0_S64x64 : S32768x64.Slices ![32640, 0] S64x64
  inb_S1x256x64x128_S1x1x64x64_0_255_0_0 : ∀ a, (![0, 255, 0, 0] : Fin 4 → Nat) a + S1x1x64x64.size a ≤ S1x256x64x128.size a
  slices_S32768x64_o32704_0_S64x64 : S32768x64.Slices ![32704, 0] S64x64
  inb_S1x256x64x128_S1x1x64x64_0_255_0_64 : ∀ a, (![0, 255, 0, 64] : Fin 4 → Nat) a + S1x1x64x64.size a ≤ S1x256x64x128.size a
  shapeCasts_S31x256x64x128_S507904x128 : S31x256x64x128.ShapeCasts S507904x128
  pads_S4096x50_S4096x64_000_0140 : S4096x50.Pads (![0, 0] : Fin 2 → Nat) ![0, 14] ![0, 0] S4096x64
  h_S_ : 0 < S_.numel
  shapeCasts_S4096x64_S262144 : S4096x64.ShapeCasts S262144
  inb_S2048_S1024_0 : ∀ a, (![0] : Fin 1 → Nat) a + S1024.size a ≤ S2048.size a
  inb_S2048_S16_0 : ∀ a, (![0] : Fin 1 → Nat) a + S16.size a ≤ S2048.size a
  h_S16 : 0 < S16.numel
  shapeCasts_S16_S16 : S16.ShapeCasts S16
  inb_S2048_S16_16 : ∀ a, (![16] : Fin 1 → Nat) a + S16.size a ≤ S2048.size a
  inb_S2048_S16_32 : ∀ a, (![32] : Fin 1 → Nat) a + S16.size a ≤ S2048.size a
  inb_S2048_S16_48 : ∀ a, (![48] : Fin 1 → Nat) a + S16.size a ≤ S2048.size a
  inb_S2048_S16_64 : ∀ a, (![64] : Fin 1 → Nat) a + S16.size a ≤ S2048.size a
  inb_S2048_S16_80 : ∀ a, (![80] : Fin 1 → Nat) a + S16.size a ≤ S2048.size a
  inb_S2048_S16_96 : ∀ a, (![96] : Fin 1 → Nat) a + S16.size a ≤ S2048.size a
  inb_S2048_S16_112 : ∀ a, (![112] : Fin 1 → Nat) a + S16.size a ≤ S2048.size a
  inb_S2048_S16_128 : ∀ a, (![128] : Fin 1 → Nat) a + S16.size a ≤ S2048.size a
  inb_S2048_S16_144 : ∀ a, (![144] : Fin 1 → Nat) a + S16.size a ≤ S2048.size a
  inb_S2048_S16_160 : ∀ a, (![160] : Fin 1 → Nat) a + S16.size a ≤ S2048.size a
  inb_S2048_S16_176 : ∀ a, (![176] : Fin 1 → Nat) a + S16.size a ≤ S2048.size a
  inb_S2048_S16_192 : ∀ a, (![192] : Fin 1 → Nat) a + S16.size a ≤ S2048.size a
  inb_S2048_S16_208 : ∀ a, (![208] : Fin 1 → Nat) a + S16.size a ≤ S2048.size a
  inb_S2048_S16_224 : ∀ a, (![224] : Fin 1 → Nat) a + S16.size a ≤ S2048.size a
  inb_S2048_S16_240 : ∀ a, (![240] : Fin 1 → Nat) a + S16.size a ≤ S2048.size a
  inb_S2048_S16_256 : ∀ a, (![256] : Fin 1 → Nat) a + S16.size a ≤ S2048.size a
  inb_S2048_S16_272 : ∀ a, (![272] : Fin 1 → Nat) a + S16.size a ≤ S2048.size a
  inb_S2048_S16_288 : ∀ a, (![288] : Fin 1 → Nat) a + S16.size a ≤ S2048.size a
  inb_S2048_S16_304 : ∀ a, (![304] : Fin 1 → Nat) a + S16.size a ≤ S2048.size a
  inb_S2048_S16_320 : ∀ a, (![320] : Fin 1 → Nat) a + S16.size a ≤ S2048.size a
  inb_S2048_S16_336 : ∀ a, (![336] : Fin 1 → Nat) a + S16.size a ≤ S2048.size a
  inb_S2048_S16_352 : ∀ a, (![352] : Fin 1 → Nat) a + S16.size a ≤ S2048.size a
  inb_S2048_S16_368 : ∀ a, (![368] : Fin 1 → Nat) a + S16.size a ≤ S2048.size a
  inb_S2048_S16_384 : ∀ a, (![384] : Fin 1 → Nat) a + S16.size a ≤ S2048.size a
  inb_S2048_S16_400 : ∀ a, (![400] : Fin 1 → Nat) a + S16.size a ≤ S2048.size a
  inb_S2048_S16_416 : ∀ a, (![416] : Fin 1 → Nat) a + S16.size a ≤ S2048.size a
  inb_S2048_S16_432 : ∀ a, (![432] : Fin 1 → Nat) a + S16.size a ≤ S2048.size a
  inb_S2048_S16_448 : ∀ a, (![448] : Fin 1 → Nat) a + S16.size a ≤ S2048.size a
  inb_S2048_S16_464 : ∀ a, (![464] : Fin 1 → Nat) a + S16.size a ≤ S2048.size a
  inb_S2048_S16_480 : ∀ a, (![480] : Fin 1 → Nat) a + S16.size a ≤ S2048.size a
  inb_S2048_S16_496 : ∀ a, (![496] : Fin 1 → Nat) a + S16.size a ≤ S2048.size a
  inb_S2048_S16_512 : ∀ a, (![512] : Fin 1 → Nat) a + S16.size a ≤ S2048.size a
  inb_S2048_S16_528 : ∀ a, (![528] : Fin 1 → Nat) a + S16.size a ≤ S2048.size a
  inb_S2048_S16_544 : ∀ a, (![544] : Fin 1 → Nat) a + S16.size a ≤ S2048.size a
  inb_S2048_S16_560 : ∀ a, (![560] : Fin 1 → Nat) a + S16.size a ≤ S2048.size a
  inb_S2048_S16_576 : ∀ a, (![576] : Fin 1 → Nat) a + S16.size a ≤ S2048.size a
  inb_S2048_S16_592 : ∀ a, (![592] : Fin 1 → Nat) a + S16.size a ≤ S2048.size a
  inb_S2048_S16_608 : ∀ a, (![608] : Fin 1 → Nat) a + S16.size a ≤ S2048.size a
  inb_S2048_S16_624 : ∀ a, (![624] : Fin 1 → Nat) a + S16.size a ≤ S2048.size a
  inb_S2048_S16_640 : ∀ a, (![640] : Fin 1 → Nat) a + S16.size a ≤ S2048.size a
  inb_S2048_S16_656 : ∀ a, (![656] : Fin 1 → Nat) a + S16.size a ≤ S2048.size a
  inb_S2048_S16_672 : ∀ a, (![672] : Fin 1 → Nat) a + S16.size a ≤ S2048.size a
  inb_S2048_S16_688 : ∀ a, (![688] : Fin 1 → Nat) a + S16.size a ≤ S2048.size a
  inb_S2048_S16_704 : ∀ a, (![704] : Fin 1 → Nat) a + S16.size a ≤ S2048.size a
  inb_S2048_S16_720 : ∀ a, (![720] : Fin 1 → Nat) a + S16.size a ≤ S2048.size a
  inb_S2048_S16_736 : ∀ a, (![736] : Fin 1 → Nat) a + S16.size a ≤ S2048.size a
  inb_S2048_S16_752 : ∀ a, (![752] : Fin 1 → Nat) a + S16.size a ≤ S2048.size a
  inb_S2048_S16_768 : ∀ a, (![768] : Fin 1 → Nat) a + S16.size a ≤ S2048.size a
  inb_S2048_S16_784 : ∀ a, (![784] : Fin 1 → Nat) a + S16.size a ≤ S2048.size a
  inb_S2048_S16_800 : ∀ a, (![800] : Fin 1 → Nat) a + S16.size a ≤ S2048.size a
  inb_S2048_S16_816 : ∀ a, (![816] : Fin 1 → Nat) a + S16.size a ≤ S2048.size a
  inb_S2048_S16_832 : ∀ a, (![832] : Fin 1 → Nat) a + S16.size a ≤ S2048.size a
  inb_S2048_S16_848 : ∀ a, (![848] : Fin 1 → Nat) a + S16.size a ≤ S2048.size a
  inb_S2048_S16_864 : ∀ a, (![864] : Fin 1 → Nat) a + S16.size a ≤ S2048.size a
  inb_S2048_S16_880 : ∀ a, (![880] : Fin 1 → Nat) a + S16.size a ≤ S2048.size a
  inb_S2048_S16_896 : ∀ a, (![896] : Fin 1 → Nat) a + S16.size a ≤ S2048.size a
  inb_S2048_S16_912 : ∀ a, (![912] : Fin 1 → Nat) a + S16.size a ≤ S2048.size a
  inb_S2048_S16_928 : ∀ a, (![928] : Fin 1 → Nat) a + S16.size a ≤ S2048.size a
  inb_S2048_S16_944 : ∀ a, (![944] : Fin 1 → Nat) a + S16.size a ≤ S2048.size a
  inb_S2048_S16_960 : ∀ a, (![960] : Fin 1 → Nat) a + S16.size a ≤ S2048.size a
  inb_S2048_S16_976 : ∀ a, (![976] : Fin 1 → Nat) a + S16.size a ≤ S2048.size a
  inb_S2048_S16_992 : ∀ a, (![992] : Fin 1 → Nat) a + S16.size a ≤ S2048.size a
  inb_S2048_S16_1008 : ∀ a, (![1008] : Fin 1 → Nat) a + S16.size a ≤ S2048.size a
  inb_S2048_S1024_1024 : ∀ a, (![1024] : Fin 1 → Nat) a + S1024.size a ≤ S2048.size a
  inb_S2x50x128_S1x50x128_0_0_0 : ∀ a, (![0, 0, 0] : Fin 3 → Nat) a + S1x50x128.size a ≤ S2x50x128.size a
  squeezes_S1x50x128_S50x128 : S1x50x128.Squeezes S50x128
  inb_S507904x128_S507904x128_0_0 : ∀ a, (![0, 0] : Fin 2 → Nat) a + S507904x128.size a ≤ S507904x128.size a
  gathers_S507904x128_S50x128 : S507904x128.Gathers 0 S50x128
  inb_S2x16x64_S1x16x64_0_0_0 : ∀ a, (![0, 0, 0] : Fin 3 → Nat) a + S1x16x64.size a ≤ S2x16x64.size a
  squeezes_S1x16x64_S16x64 : S1x16x64.Squeezes S16x64
  inb_S2048_S16_1024 : ∀ a, (![1024] : Fin 1 → Nat) a + S16.size a ≤ S2048.size a
  inb_S2048_S16_1040 : ∀ a, (![1040] : Fin 1 → Nat) a + S16.size a ≤ S2048.size a
  inb_S2048_S16_1056 : ∀ a, (![1056] : Fin 1 → Nat) a + S16.size a ≤ S2048.size a
  inb_S2048_S16_1072 : ∀ a, (![1072] : Fin 1 → Nat) a + S16.size a ≤ S2048.size a
  inb_S2048_S16_1088 : ∀ a, (![1088] : Fin 1 → Nat) a + S16.size a ≤ S2048.size a
  inb_S2048_S16_1104 : ∀ a, (![1104] : Fin 1 → Nat) a + S16.size a ≤ S2048.size a
  inb_S2048_S16_1120 : ∀ a, (![1120] : Fin 1 → Nat) a + S16.size a ≤ S2048.size a
  inb_S2048_S16_1136 : ∀ a, (![1136] : Fin 1 → Nat) a + S16.size a ≤ S2048.size a
  inb_S2048_S16_1152 : ∀ a, (![1152] : Fin 1 → Nat) a + S16.size a ≤ S2048.size a
  inb_S2048_S16_1168 : ∀ a, (![1168] : Fin 1 → Nat) a + S16.size a ≤ S2048.size a
  inb_S2048_S16_1184 : ∀ a, (![1184] : Fin 1 → Nat) a + S16.size a ≤ S2048.size a
  inb_S2048_S16_1200 : ∀ a, (![1200] : Fin 1 → Nat) a + S16.size a ≤ S2048.size a
  inb_S2048_S16_1216 : ∀ a, (![1216] : Fin 1 → Nat) a + S16.size a ≤ S2048.size a
  inb_S2048_S16_1232 : ∀ a, (![1232] : Fin 1 → Nat) a + S16.size a ≤ S2048.size a
  inb_S2048_S16_1248 : ∀ a, (![1248] : Fin 1 → Nat) a + S16.size a ≤ S2048.size a
  inb_S2048_S16_1264 : ∀ a, (![1264] : Fin 1 → Nat) a + S16.size a ≤ S2048.size a
  inb_S2048_S16_1280 : ∀ a, (![1280] : Fin 1 → Nat) a + S16.size a ≤ S2048.size a
  inb_S2048_S16_1296 : ∀ a, (![1296] : Fin 1 → Nat) a + S16.size a ≤ S2048.size a
  inb_S2048_S16_1312 : ∀ a, (![1312] : Fin 1 → Nat) a + S16.size a ≤ S2048.size a
  inb_S2048_S16_1328 : ∀ a, (![1328] : Fin 1 → Nat) a + S16.size a ≤ S2048.size a
  inb_S2048_S16_1344 : ∀ a, (![1344] : Fin 1 → Nat) a + S16.size a ≤ S2048.size a
  inb_S2048_S16_1360 : ∀ a, (![1360] : Fin 1 → Nat) a + S16.size a ≤ S2048.size a
  inb_S2048_S16_1376 : ∀ a, (![1376] : Fin 1 → Nat) a + S16.size a ≤ S2048.size a
  inb_S2048_S16_1392 : ∀ a, (![1392] : Fin 1 → Nat) a + S16.size a ≤ S2048.size a
  inb_S2048_S16_1408 : ∀ a, (![1408] : Fin 1 → Nat) a + S16.size a ≤ S2048.size a
  inb_S2048_S16_1424 : ∀ a, (![1424] : Fin 1 → Nat) a + S16.size a ≤ S2048.size a
  inb_S2048_S16_1440 : ∀ a, (![1440] : Fin 1 → Nat) a + S16.size a ≤ S2048.size a
  inb_S2048_S16_1456 : ∀ a, (![1456] : Fin 1 → Nat) a + S16.size a ≤ S2048.size a
  inb_S2048_S16_1472 : ∀ a, (![1472] : Fin 1 → Nat) a + S16.size a ≤ S2048.size a
  inb_S2048_S16_1488 : ∀ a, (![1488] : Fin 1 → Nat) a + S16.size a ≤ S2048.size a
  inb_S2048_S16_1504 : ∀ a, (![1504] : Fin 1 → Nat) a + S16.size a ≤ S2048.size a
  inb_S2048_S16_1520 : ∀ a, (![1520] : Fin 1 → Nat) a + S16.size a ≤ S2048.size a
  inb_S2048_S16_1536 : ∀ a, (![1536] : Fin 1 → Nat) a + S16.size a ≤ S2048.size a
  inb_S2048_S16_1552 : ∀ a, (![1552] : Fin 1 → Nat) a + S16.size a ≤ S2048.size a
  inb_S2048_S16_1568 : ∀ a, (![1568] : Fin 1 → Nat) a + S16.size a ≤ S2048.size a
  inb_S2048_S16_1584 : ∀ a, (![1584] : Fin 1 → Nat) a + S16.size a ≤ S2048.size a
  inb_S2048_S16_1600 : ∀ a, (![1600] : Fin 1 → Nat) a + S16.size a ≤ S2048.size a
  inb_S2048_S16_1616 : ∀ a, (![1616] : Fin 1 → Nat) a + S16.size a ≤ S2048.size a
  inb_S2048_S16_1632 : ∀ a, (![1632] : Fin 1 → Nat) a + S16.size a ≤ S2048.size a
  inb_S2048_S16_1648 : ∀ a, (![1648] : Fin 1 → Nat) a + S16.size a ≤ S2048.size a
  inb_S2048_S16_1664 : ∀ a, (![1664] : Fin 1 → Nat) a + S16.size a ≤ S2048.size a
  inb_S2048_S16_1680 : ∀ a, (![1680] : Fin 1 → Nat) a + S16.size a ≤ S2048.size a
  inb_S2048_S16_1696 : ∀ a, (![1696] : Fin 1 → Nat) a + S16.size a ≤ S2048.size a
  inb_S2048_S16_1712 : ∀ a, (![1712] : Fin 1 → Nat) a + S16.size a ≤ S2048.size a
  inb_S2048_S16_1728 : ∀ a, (![1728] : Fin 1 → Nat) a + S16.size a ≤ S2048.size a
  inb_S2048_S16_1744 : ∀ a, (![1744] : Fin 1 → Nat) a + S16.size a ≤ S2048.size a
  inb_S2048_S16_1760 : ∀ a, (![1760] : Fin 1 → Nat) a + S16.size a ≤ S2048.size a
  inb_S2048_S16_1776 : ∀ a, (![1776] : Fin 1 → Nat) a + S16.size a ≤ S2048.size a
  inb_S2048_S16_1792 : ∀ a, (![1792] : Fin 1 → Nat) a + S16.size a ≤ S2048.size a
  inb_S2048_S16_1808 : ∀ a, (![1808] : Fin 1 → Nat) a + S16.size a ≤ S2048.size a
  inb_S2048_S16_1824 : ∀ a, (![1824] : Fin 1 → Nat) a + S16.size a ≤ S2048.size a
  inb_S2048_S16_1840 : ∀ a, (![1840] : Fin 1 → Nat) a + S16.size a ≤ S2048.size a
  inb_S2048_S16_1856 : ∀ a, (![1856] : Fin 1 → Nat) a + S16.size a ≤ S2048.size a
  inb_S2048_S16_1872 : ∀ a, (![1872] : Fin 1 → Nat) a + S16.size a ≤ S2048.size a
  inb_S2048_S16_1888 : ∀ a, (![1888] : Fin 1 → Nat) a + S16.size a ≤ S2048.size a
  inb_S2048_S16_1904 : ∀ a, (![1904] : Fin 1 → Nat) a + S16.size a ≤ S2048.size a
  inb_S2048_S16_1920 : ∀ a, (![1920] : Fin 1 → Nat) a + S16.size a ≤ S2048.size a
  inb_S2048_S16_1936 : ∀ a, (![1936] : Fin 1 → Nat) a + S16.size a ≤ S2048.size a
  inb_S2048_S16_1952 : ∀ a, (![1952] : Fin 1 → Nat) a + S16.size a ≤ S2048.size a
  inb_S2048_S16_1968 : ∀ a, (![1968] : Fin 1 → Nat) a + S16.size a ≤ S2048.size a
  inb_S2048_S16_1984 : ∀ a, (![1984] : Fin 1 → Nat) a + S16.size a ≤ S2048.size a
  inb_S2048_S16_2000 : ∀ a, (![2000] : Fin 1 → Nat) a + S16.size a ≤ S2048.size a
  inb_S2048_S16_2016 : ∀ a, (![2016] : Fin 1 → Nat) a + S16.size a ≤ S2048.size a
  inb_S2048_S16_2032 : ∀ a, (![2032] : Fin 1 → Nat) a + S16.size a ≤ S2048.size a
  inb_S2x50x128_S1x50x128_1_0_0 : ∀ a, (![1, 0, 0] : Fin 3 → Nat) a + S1x50x128.size a ≤ S2x50x128.size a
  slices_S16_o0_S1 : S16.Slices ![0] S1
  inpos_S1_p0 : ∀ a, (![0] : Fin 1 → Nat) a < S1.size a
  h_S1x1x16 : 0 < S1x1x16.numel
  shapeCasts_S1x1x16_S16 : S1x1x16.ShapeCasts S16
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  shapeCasts_S16_S1x1x16 : S16.ShapeCasts S1x1x16
  inb_S2x16x64_S1x16x64_1_0_0 : ∀ a, (![1, 0, 0] : Fin 3 → Nat) a + S1x16x64.size a ≤ S2x16x64.size a
  shapeCasts_S256_S1x256 : S256.ShapeCasts S1x256
  shapeCasts_S50_S1x50 : S50.ShapeCasts S1x50
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x50_S256x50_0_0 : ∀ a, (![0, 0] : Fin 2 → Nat) a + S256x50.size a ≤ S256x50.size a
  h_S256x50 : 0 < S256x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S512x50 : S1x50.Broadcasts S512x50
  reduces_S512x50_S512 : S512x50.Reduces [1] S512
  shapeCasts_S512_S512x1 : S512.ShapeCasts S512x1
  broadcasts_S512x1_S512x50 : S512x1.Broadcasts S512x50
  inb_S512x50_S512x50_0_0 : ∀ a, (![0, 0] : Fin 2 → Nat) a + S512x50.size a ≤ S512x50.size a
  h_S512x50 : 0 < S512x50.numel
  dot_S64x32768_S64x64_S32768x64_0_0_1_1_n_n_wf : DotDims.WF S64x32768 S64x64 S32768x64 [0] [0] [1] [1] [] []
  dot_S512x64_S64x256_S512x256_1_0_0_1_n_n_wf : DotDims.WF S512x64 S64x256 S512x256 [1] [0] [0] [1] [] []
  dot_S512x256_S256x50_S512x50_1_0_0_1_n_n_wf : DotDims.WF S512x256 S256x50 S512x50 [1] [0] [0] [1] [] []
  hcc1_scratch5 : 4 + S_.numel ≤ 18
  hcc1_scratch6 : 5 + S_.numel ≤ 18
  hcc1_scratch7 : 6 + S_.numel ≤ 18
  hcc1_scratch8 : 7 + S_.numel ≤ 18
  hcc1_scratch9 : 8 + S_.numel ≤ 18
  hcc1_scratch10 : 9 + S_.numel ≤ 18
  hscKind : ∀ q, scKind q ≠ .tc
  hscCore : ∀ q, scNCore q ≤ τ.nSC
  hscSub : ∀ q, scNSub q ≤ τ.nSub

class Facts₀ : Prop where
  k0 : K0.Facts₀
  k1 : K1.Facts₀
  k2 : K2.Facts₀
  shapes1 : Shapes1.Facts₀
  shapes2 : Shapes2.Facts₀
attribute [instance] Facts₀.k0 Facts₀.k1 Facts₀.k2 Facts₀.shapes1 Facts₀.shapes2

variable [Facts₀]

abbrev cc1_scratch5 : DmaSems sig S_ := SemArray.consecutive 4 S_ hcc1_scratch5
abbrev cc1_scratch6 : DmaSems sig S_ := SemArray.consecutive 5 S_ hcc1_scratch6
abbrev cc1_scratch7 : DmaSems sig S_ := SemArray.consecutive 6 S_ hcc1_scratch7
abbrev cc1_scratch8 : DmaSems sig S_ := SemArray.consecutive 7 S_ hcc1_scratch8
abbrev cc1_scratch9 : DmaSems sig S_ := SemArray.consecutive 8 S_ hcc1_scratch9
abbrev cc1_scratch10 : DmaSems sig S_ := SemArray.consecutive 9 S_ hcc1_scratch10
def dot_S64x32768_S64x64_S32768x64_0_0_1_1_n_n : DotDims S64x32768 S64x64 S32768x64 where
  lhsContracting := [0]
  rhsContracting := [0]
  lhsNonContracting := [1]
  rhsNonContracting := [1]
  lhsBatch := []
  rhsBatch := []
  wf := dot_S64x32768_S64x64_S32768x64_0_0_1_1_n_n_wf
def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf
def dot_S512x256_S256x50_S512x50_1_0_0_1_n_n : DotDims S512x256 S256x50 S512x50 where
  lhsContracting := [1]
  rhsContracting := [0]
  lhsNonContracting := [0]
  rhsNonContracting := [1]
  lhsBatch := []
  rhsBatch := []
  wf := dot_S512x256_S256x50_S512x50_1_0_0_1_n_n_wf

abbrev win0_0 : Pipeline.Window sig grid0 :=
  Pipeline.Window.ofSpecClip (Memref.whole main_v0) S64x32768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S1x256x64x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win2_0 : Pipeline.Window sig grid2 :=
  Pipeline.Window.ofSpec (Memref.whole main_v5) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S256x50.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x50.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S512x50.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x50 : Shape := ⟨2, ![4096, 50]⟩
abbrev S1000000x64 : Shape := ⟨2, ![1000000, 64]⟩
abbrev S64x256 : Shape := ⟨2, ![64, 256]⟩
abbrev S256 : Shape := ⟨1, ![256]⟩
abbrev S256x50 : Shape := ⟨2, ![256, 50]⟩
abbrev S50 : Shape := ⟨1, ![50]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x64 : Shape := ⟨3, ![4096, 50, 64]⟩
abbrev S4096x64 : Shape := ⟨2, ![4096, 64]⟩
abbrev S4096x256 : Shape := ⟨2, ![4096, 256]⟩
abbrev S1x256 : Shape := ⟨2, ![1, 256]⟩
abbrev S1x50 : Shape := ⟨2, ![1, 50]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1000000x64, .f32⟩
  | .hbm, ⟨2, _⟩ => ⟨S64x256, .f32⟩
  | .hbm, ⟨3, _⟩ => ⟨S256, .f32⟩
  | .hbm, ⟨4, _⟩ => ⟨S256x50, .f32⟩
  | .hbm, ⟨5, _⟩ => ⟨S50, .f32⟩
  | .hbm, ⟨6, _⟩ => ⟨S_, .i32⟩
  | .hbm, ⟨7, _⟩ => ⟨S4096x50, .i32⟩
  | .hbm, ⟨8, _⟩ => ⟨S4096x50, .i1⟩
  | .hbm, ⟨9, _⟩ => ⟨S_, .i32⟩
  | .hbm, ⟨10, _⟩ => ⟨S4096x50, .i32⟩
  | .hbm, ⟨11, _⟩ => ⟨S4096x50, .i32⟩
  | .hbm, ⟨12, _⟩ => ⟨S4096x50, .i32⟩
  | .hbm, ⟨13, _⟩ => ⟨S4096x50x1, .i32⟩
  | .hbm, ⟨14, _⟩ => ⟨S1, .i32⟩
  | .hbm, ⟨15, _⟩ => ⟨S_, .i32⟩
  | .hbm, ⟨16, _⟩ => ⟨S4096x50x1, .i32⟩
  | .hbm, ⟨17, _⟩ => ⟨S4096x50x1, .i1⟩
  | .hbm, ⟨18, _⟩ => ⟨S1x1x1, .i32⟩
  | .hbm, ⟨19, _⟩ => ⟨S4096x50x1, .i32⟩
  | .hbm, ⟨20, _⟩ => ⟨S4096x50x1, .i1⟩
  | .hbm, ⟨21, _⟩ => ⟨S4096x50x1, .i1⟩
  | .hbm, ⟨22, _⟩ => ⟨S_, .i1⟩
  | .hbm, ⟨23, _⟩ => ⟨S4096x50, .i1⟩
  | .hbm, ⟨24, _⟩ => ⟨S4096x50x64, .f32⟩
  | .hbm, ⟨25, _⟩ => ⟨S4096x50x64, .i1⟩
  | .hbm, ⟨26, _⟩ => ⟨S_, .f32⟩
  | .hbm, ⟨27, _⟩ => ⟨S4096x50x64, .f32⟩
  | .hbm, ⟨28, _⟩ => ⟨S4096x50x64, .f32⟩
  | .hbm, ⟨29, _⟩ => ⟨S_, .f32⟩
  | .hbm, ⟨30, _⟩ => ⟨S4096x64, .f32⟩
  | .hbm, ⟨31, _⟩ => ⟨S_, .f32⟩
  | .hbm, ⟨32, _⟩ => ⟨S4096x64, .f32⟩
  | .hbm, ⟨33, _⟩ => ⟨S4096x64, .f32⟩
  | .hbm, ⟨34, _⟩ => ⟨S4096x256, .f32⟩
  | .hbm, ⟨35, _⟩ => ⟨S1x256, .f32⟩
  | .hbm, ⟨36, _⟩ => ⟨S4096x256, .f32⟩
  | .hbm, ⟨37, _⟩ => ⟨S4096x256, .f32⟩
  | .hbm, ⟨38, _⟩ => ⟨S_, .f32⟩
  | .hbm, ⟨39, _⟩ => ⟨S4096x256, .f32⟩
  | .hbm, ⟨40, _⟩ => ⟨S4096x256, .f32⟩
  | .hbm, ⟨41, _⟩ => ⟨S4096x50, .f32⟩
  | .hbm, ⟨42, _⟩ => ⟨S1x50, .f32⟩
  | .hbm, ⟨43, _⟩ => ⟨S4096x50, .f32⟩
  | .hbm, ⟨44, _⟩ => ⟨S4096x50, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1, .f32⟩
  | .hbm, ⟨51, _⟩ => ⟨S4096x50, .f32⟩
  | .hbm, ⟨52, _⟩ => ⟨S4096x50, .f32⟩
  | .hbm, ⟨53, _⟩ => ⟨S4096x50, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1, .f32⟩
  | .hbm, ⟨58, _⟩ => ⟨S4096x50, .f32⟩
  | .hbm, ⟨59, _⟩ => ⟨S4096x50, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_call1_cst : Ref sig .tc := ⟨.hbm, 45, rfl⟩
abbrev main_call1_v0 : Ref sig .tc := ⟨.hbm, 46, rfl⟩
abbrev main_call1_cst_0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_cst_1 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_v14 : Ref sig .tc := ⟨.hbm, 59, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x64_0_1 : S4096x50.BroadcastsInDim S4096x50x64 (![0, 1] : Fin 2 → Fin S4096x50x64.rank)
  bcast_S_S4096x50x64 : S_.BroadcastsInDim S4096x50x64 (![] : Fin 0 → Fin S4096x50x64.rank)
  reducesTo_S4096x50x64_S4096x64_d1 : S4096x50x64.ReducesTo [1] S4096x64
  bcast_S_S4096x64 : S_.BroadcastsInDim S4096x64 (![] : Fin 0 → Fin S4096x64.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S50_S1x50_1 : S50.BroadcastsInDim S1x50 (![1] : Fin 1 → Fin S1x50.rank)
  bcast_S1x50_S4096x50_0_1 : S1x50.BroadcastsInDim S4096x50 (![0, 1] : Fin 2 → Fin S4096x50.rank)
  reducesTo_S4096x50_S4096_d1 : S4096x50.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50_0_1 : S4096x1.BroadcastsInDim S4096x50 (![0, 1] : Fin 2 → Fin S4096x50.rank)
  gather_S1000000x64_S4096x50x1_S4096x50x64_2_0_n_n_0_2_164_wf : GatherDims.WF S1000000x64 S4096x50x1 S4096x50x64 [2] [0] [] [0] [] 2 ![1, 64]
  dot_S4096x64_S64x256_S4096x256_1_0_0_1_n_n_wf : DotDims.WF S4096x64 S64x256 S4096x256 [1] [0] [0] [1] [] []
  dot_S4096x256_S256x50_S4096x50_1_0_0_1_n_n_wf : DotDims.WF S4096x256 S256x50 S4096x50 [1] [0] [0] [1] [] []

variable [Facts₀]

def gather_S1000000x64_S4096x50x1_S4096x50x64_2_0_n_n_0_2_164 : GatherDims S1000000x64 S4096x50x1 S4096x50x64 where
  offsetDims := [2]
  collapsedSliceDims := [0]
  operandBatchingDims := []
  startIndicesBatchingDims := []
  startIndexMap := [0]
  indexVectorDim := 2
  sliceSizes := ![1, 64]
  wf := gather_S1000000x64_S4096x50x1_S4096x50x64_2_0_n_n_0_2_164_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x50_S4096x50_1_0_0_1_n_n : DotDims S4096x256 S256x50 S4096x50 where
  lhsContracting := [1]
  rhsContracting := [0]
  lhsNonContracting := [0]
  rhsNonContracting := [1]
  lhsBatch := []
  rhsBatch := []
  wf := dot_S4096x256_S256x50_S4096x50_1_0_0_1_n_n_wf

class Facts : Prop extends Facts₀ where

variable [Facts]
-- ==== Proof.RefSpec.lean ====
/-
  The reference function as a pure term of its six arguments, in stages: the looked-up rows, their mean over
  the fifty positions of a bag, the hidden layer, the logits, and the logarithm of the softmax.  Every stage is
  the composition of the reference program's own operations, in the program's order, over the program's shapes
  and shape relations; nothing is simplified here.
-/
import proofs.«203835_g19404662243951_cont_8to1_399_35_alg».proof.Proof.Gen.ReferenceIdeal

noncomputable section

namespace Cert.Proof.Ref

open Cert.ReferenceIdeal Cert.ReferenceIdeal.Gen Idealize.ShloMosaic

variable {F : FTy → Type} [FloatOps F]

/-- A negative index counted from the end of the table: `idx + 1000000` where `idx < 0` (signed), else `idx`. -/
def wrapped (idx : IVec S4096x50 32) : IVec S4096x50 32 :=
  select (cmpi .slt idx (broadcastInDim S4096x50 ![] bcast_S_S4096x50 (constantI S_ 32 0#32)))
    (addi idx (broadcastInDim S4096x50 ![] bcast_S_S4096x50 (constantI S_ 32 1000000#32))) idx

/-- The wrapped indices as the gather's start indices, one coordinate each. -/
def starts (idx : IVec S4096x50 32) : IVec S4096x50x1 32 :=
  broadcastInDim S4096x50x1 ![0, 1] bcast_S4096x50_S4096x50x1_0_1 (wrapped idx)

/-- Where the start index names a row of the table: `0 ≤ i` and `i ≤ 999999` (signed), over the one coordinate. -/
def inRange (idx : IVec S4096x50 32) : IVec S4096x50 1 :=
  Host.reduce IntOp.andi
    (andi (cmpi .sge (starts idx) (broadcastInDim S4096x50x1 ![] bcast_S_S4096x50x1 (constantI S_ 32 0#32)))
      (cmpi .sle (starts idx)
        (broadcastInDim S4096x50x1 ![0, 1, 2] bcast_S1x1x1_S4096x50x1_0_1_2
          (broadcastInDim S1x1x1 ![2] bcast_S1_S1x1x1_2 (constantI S1 32 999999#32)))))
    (constantI S_ 1 1#1) reducesTo_S4096x50x1_S4096x50_d2 h_S_

/-- The rows looked up: row `idx (b, j)` of the table at `(b, j, ·)`, a quiet NaN where the index names no row. -/
def taken (idx : IVec S4096x50 32) (emb : FVec F S1000000x64 .f32) : FVec F S4096x50x64 .f32 :=
  select (broadcastInDim S4096x50x64 ![0, 1] bcast_S4096x50_S4096x50x64_0_1 (inRange idx))
    (Host.gather gather_S1000000x64_S4096x50x1_S4096x50x64_2_0_n_n_0_2_164 emb (starts idx))
    (broadcastInDim S4096x50x64 ![] bcast_S_S4096x50x64 (constant S_ .f32 0x7FC00000#32))

/-- The mean of a bag's fifty rows: their sum from zero, divided by fifty. -/
def mean (idx : IVec S4096x50 32) (emb : FVec F S1000000x64 .f32) : FVec F S4096x64 .f32 :=
  Host.divf
    (Host.reduceAdd (taken idx emb) (constant S_ .f32 0x00000000#32) reducesTo_S4096x50x64_S4096x64_d1 h_S_)
    (broadcastInDim S4096x64 ![] bcast_S_S4096x64 (constant S_ .f32 0x42480000#32))

/-- The hidden layer: `max (x · W1 + b1) 0`. -/
def hidden (x : FVec F S4096x64 .f32) (W1 : FVec F S64x256 .f32) (b1 : FVec F S256 .f32) : FVec F S4096x256 .f32 :=
  maximumf
    (addf (Host.dotGeneral dot_S4096x64_S64x256_S4096x256_1_0_0_1_n_n none x W1)
      (broadcastInDim S4096x256 ![0, 1] bcast_S1x256_S4096x256_0_1 (broadcastInDim S1x256 ![1] bcast_S256_S1x256_1 b1)))
    (broadcastInDim S4096x256 ![] bcast_S_S4096x256 (constant S_ .f32 0x00000000#32))

/-- The logits: `h · W2 + b2`. -/
def logits (h : FVec F S4096x256 .f32) (W2 : FVec F S256x50 .f32) (b2 : FVec F S50 .f32) : FVec F S4096x50 .f32 :=
  addf (Host.dotGeneral dot_S4096x256_S256x50_S4096x50_1_0_0_1_n_n none h W2)
    (broadcastInDim S4096x50 ![0, 1] bcast_S1x50_S4096x50_0_1 (broadcastInDim S1x50 ![1] bcast_S50_S1x50_1 b2))

/-- A row's maximum, from minus infinity and once more against minus infinity. -/
def rowMax (x : FVec F S4096x50 .f32) : FVec F S4096 .f32 :=
  maximumf (broadcastInDim S4096 ![] bcast_S_S4096 (constant S_ .f32 0xFF800000#32))
    (Host.reduce FloatOps.maximumf x (constant S_ .f32 0xFF800000#32) reducesTo_S4096x50_S4096_d1 h_S_)

/-- A row less its maximum. -/
def shifted (x : FVec F S4096x50 .f32) : FVec F S4096x50 .f32 :=
  subf x (broadcastInDim S4096x50 ![0, 1] bcast_S4096x1_S4096x50_0_1 (broadcastInDim S4096x1 ![0] bcast_S4096_S4096x1_0 (rowMax x)))

/-- The logarithm of the softmax along a row: the shifted row less the logarithm of the sum, from zero, of its exponentials. -/
def logSoftmax (x : FVec F S4096x50 .f32) : FVec F S4096x50 .f32 :=
  subf (shifted x)
    (broadcastInDim S4096x50 ![0, 1] bcast_S4096x1_S4096x50_0_1
      (Host.log (broadcastInDim S4096x1 ![0] bcast_S4096_S4096x1_0
        (Host.reduceAdd (Host.exp (shifted x)) (constant S_ .f32 0x00000000#32) reducesTo_S4096x50_S4096_d1 h_S_))))

/-- The reference's result as a function of its six arguments. -/
def out (idx : IVec S4096x50 32) (emb : FVec F S1000000x64 .f32) (W1 : FVec F S64x256 .f32) (b1 : FVec F S256 .f32)
    (W2 : FVec F S256x50 .f32) (b2 : FVec F S50 .f32) : FVec F S4096x50 .f32 :=
  logSoftmax (logits (hidden (mean idx emb) W1 b1) W2 b2)

end Cert.Proof.Ref

end
-- ==== Proof.RefRun.lean ====
/-
  The reference program's run.  Its @main is a straight line of fifty-four host operations once the three
  module-local functions it calls are unfolded at their call sites; the line is listed here in the program's
  order, the run of a straight line then gives every buffer's final contents as the fold of the operations
  over the launch contents, and the fold at the result buffer is the reference function of the six arguments.
-/
import proofs.«203835_g19404662243951_cont_8to1_399_35_alg».proof.Proof.RefSpec
import Idealize.ShloMosaic.Lib.StableHlo.Run

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the calls unfolded: the lookup's twenty-three (among them the select of the
    function that wraps negative indices), @main's own sixteen, the log-softmax's fifteen. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0 : TRef sig ⟨S4096x50, .i32⟩) main_call0.v0 main_call0.v1 (cmpi .slt),
    TRef.nullary main_call0.c_0 (constantI S_ 32 1000000#32),
    TRef.unary main_call0.c_0 main_call0.v2 (broadcastInDim S4096x50 ![] bcast_S_S4096x50),
    TRef.binary (.of main_arg0 : TRef sig ⟨S4096x50, .i32⟩) main_call0.v2 main_call0.v3 addi,
    TRef.ternary main_call0.v1 main_call0.v3 (.of main_arg0 : TRef sig ⟨S4096x50, .i32⟩) main_call0.call0.v0 select,
    TRef.unary main_call0.call0.v0 main_call0.v5 (broadcastInDim S4096x50x1 ![0, 1] bcast_S4096x50_S4096x50x1_0_1),
    TRef.nullary main_call0.c_1 (constantI S1 32 999999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1 : TRef sig ⟨S1000000x64, .f32⟩) main_call0.v5 main_call0.v13 (fun x i => Host.gather gather_S1000000x64_S4096x50x1_S4096x50x64_2_0_n_n_0_2_164 x i),
    TRef.unary main_call0.v12 main_call0.v14 (broadcastInDim S4096x50x64 ![0, 1] bcast_S4096x50_S4096x50x64_0_1),
    TRef.nullary main_call0.cst (constant S_ .f32 0x7FC00000#32),
    TRef.unary main_call0.cst main_call0.v15 (broadcastInDim S4096x50x64 ![] bcast_S_S4096x50x64),
    TRef.ternary main_call0.v14 main_call0.v13 main_call0.v15 main_call0.v16 select,
    nullary main_cst (constant S_ .f32 0x00000000#32),
    binary main_v0 main_cst main_v1 ((fun x v => Host.reduceAdd x v reducesTo_S4096x50x64_S4096x64_d1 h_S_) : (⟨S4096x50x64, .f32⟩ : BufTy).Contents (Elt F) → (⟨S_, .f32⟩ : BufTy).Contents (Elt F) → (⟨S4096x64, .f32⟩ : BufTy).Contents (Elt F)),
    nullary main_cst_0 (constant S_ .f32 0x42480000#32),
    unary main_cst_0 main_v2 (broadcastInDim S4096x64 ![] bcast_S_S4096x64 : (⟨S_, .f32⟩ : BufTy).Contents (Elt F) → (⟨S4096x64, .f32⟩ : BufTy).Contents (Elt F)),
    binary main_v1 main_v2 main_v3 (Host.divf : (⟨S4096x64, .f32⟩ : BufTy).Contents (Elt F) → (⟨S4096x64, .f32⟩ : BufTy).Contents (Elt F) → (⟨S4096x64, .f32⟩ : BufTy).Contents (Elt F)),
    binary main_v3 main_arg2 main_v4 ((fun l r => Host.dotGeneral dot_S4096x64_S64x256_S4096x256_1_0_0_1_n_n none l r) : (⟨S4096x64, .f32⟩ : BufTy).Contents (Elt F) → (⟨S64x256, .f32⟩ : BufTy).Contents (Elt F) → (⟨S4096x256, .f32⟩ : BufTy).Contents (Elt F)),
    unary main_arg3 main_v5 (broadcastInDim S1x256 ![1] bcast_S256_S1x256_1 : (⟨S256, .f32⟩ : BufTy).Contents (Elt F) → (⟨S1x256, .f32⟩ : BufTy).Contents (Elt F)),
    unary main_v5 main_v6 (broadcastInDim S4096x256 ![0, 1] bcast_S1x256_S4096x256_0_1 : (⟨S1x256, .f32⟩ : BufTy).Contents (Elt F) → (⟨S4096x256, .f32⟩ : BufTy).Contents (Elt F)),
    binary main_v4 main_v6 main_v7 (addf : (⟨S4096x256, .f32⟩ : BufTy).Contents (Elt F) → (⟨S4096x256, .f32⟩ : BufTy).Contents (Elt F) → (⟨S4096x256, .f32⟩ : BufTy).Contents (Elt F)),
    nullary main_cst_1 (constant S_ .f32 0x00000000#32),
    unary main_cst_1 main_v8 (broadcastInDim S4096x256 ![] bcast_S_S4096x256 : (⟨S_, .f32⟩ : BufTy).Contents (Elt F) → (⟨S4096x256, .f32⟩ : BufTy).Contents (Elt F)),
    binary main_v7 main_v8 main_v9 (maximumf : (⟨S4096x256, .f32⟩ : BufTy).Contents (Elt F) → (⟨S4096x256, .f32⟩ : BufTy).Contents (Elt F) → (⟨S4096x256, .f32⟩ : BufTy).Contents (Elt F)),
    binary main_v9 main_arg4 main_v10 ((fun l r => Host.dotGeneral dot_S4096x256_S256x50_S4096x50_1_0_0_1_n_n none l r) : (⟨S4096x256, .f32⟩ : BufTy).Contents (Elt F) → (⟨S256x50, .f32⟩ : BufTy).Contents (Elt F) → (⟨S4096x50, .f32⟩ : BufTy).Contents (Elt F)),
    unary main_arg5 main_v11 (broadcastInDim S1x50 ![1] bcast_S50_S1x50_1 : (⟨S50, .f32⟩ : BufTy).Contents (Elt F) → (⟨S1x50, .f32⟩ : BufTy).Contents (Elt F)),
    unary main_v11 main_v12 (broadcastInDim S4096x50 ![0, 1] bcast_S1x50_S4096x50_0_1 : (⟨S1x50, .f32⟩ : BufTy).Contents (Elt F) → (⟨S4096x50, .f32⟩ : BufTy).Contents (Elt F)),
    binary main_v10 main_v12 main_v13 (addf : (⟨S4096x50, .f32⟩ : BufTy).Contents (Elt F) → (⟨S4096x50, .f32⟩ : BufTy).Contents (Elt F) → (⟨S4096x50, .f32⟩ : BufTy).Contents (Elt F)),
    TRef.nullary main_call1.cst (constant S_ .f32 0xFF800000#32),
    TRef.binary (.of main_v13 : TRef sig ⟨S4096x50, .f32⟩) main_call1.cst main_call1.v0 (fun x v => Host.reduce FloatOps.maximumf x v reducesTo_S4096x50_S4096_d1 h_S_),
    TRef.nullary main_call1.cst_0 (constant S_ .f32 0xFF800000#32),
    TRef.unary main_call1.cst_0 main_call1.v1 (broadcastInDim S4096 ![] bcast_S_S4096),
    TRef.binary main_call1.v1 main_call1.v0 main_call1.v2 maximumf,
    TRef.unary main_call1.v2 main_call1.v3 (broadcastInDim S4096x1 ![0] bcast_S4096_S4096x1_0),
    TRef.unary main_call1.v3 main_call1.v4 (broadcastInDim S4096x50 ![0, 1] bcast_S4096x1_S4096x50_0_1),
    TRef.binary (.of main_v13 : TRef sig ⟨S4096x50, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S4096x50_S4096_d1 h_S_),
    TRef.unary main_call1.v7 main_call1.v8 (broadcastInDim S4096x1 ![0] bcast_S4096_S4096x1_0),
    TRef.unary main_call1.v8 main_call1.v9 Host.log,
    TRef.unary main_call1.v9 main_call1.v10 (broadcastInDim S4096x50 ![0, 1] bcast_S4096x1_S4096x50_0_1),
    TRef.binary main_call1.v5 main_call1.v10 main_call1.v11 subf ]

set_option maxRecDepth 2048 in
/-- @main is that straight line: the functions' definitions unfolded at their calls, both sides are one chain of
    host steps once sequencing is reassociated. -/
theorem main_eq (c : Dev nD) : main (F := F) c = seq ops := by
  simp only [main, fn_take.body, fn_where.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

attribute [local irreducible] Host.reduce Host.reduceAdd Host.gather in
set_option maxRecDepth 8192 in
set_option maxHeartbeats 1000000 in
/-- The fold at the result buffer is the reference function of the contents of the six argument buffers: each
    operation's result is its function of its operands' contents, and the typed references' transports are the
    identity at these literal references. -/
theorem out_eq (V : Valuation τ sig (Elt F)) :
    after ops V (main_v14 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On every device, for any float values, from any memory with zero counters: every weakly fair execution of
    @main terminates with the result buffer at the reference function of the six arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v14).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.Proof.Ref

end
-- ==== Proof.Spec.lean ====
/-
  The mathematics of the embedding-bag kernel, stated once over literal shapes and independent of any printed program.

  A vocabulary index `v` (a 32-bit word) names row `v` of the embedding table `emb : [1000000, 64]`. The kernel first
  relays the table into `tab : [507904, 128]`: 128 consecutive vocabulary rows fill 64 table rows, the first 64 of them in
  columns 0..63 and the last 64 in columns 64..127. So vocabulary row `v` is found at table row
  `trow v = (v >>> 7) * 64 + (v &&& 63)`, columns `tcol v + c` with `tcol v = ((v >>> 6) &&& 1) * 64` (0 or 64).
  The bags are the rows of the index array padded from 50 to 64 words and flattened: word `64 b + j` (`j < 50`) is the
  `j`-th index of bag `b`. A bag's sum is the left-to-right sum, from zero, of its 50 table rows.
-/
import Idealize.ShloMosaic.PureOps
import Idealize.ShloMosaic.Lib.ValueIdx

noncomputable section

namespace Cert.Proof.Spec

open Idealize.ShloMosaic Idealize.ShloMosaic.ValueIdx

variable {F : FTy → Type} [FloatOps F]

/-- The index array, the padded one, the flat one, the embedding table, the relaid table, the bag sums. -/
abbrev SIdx : Shape := ⟨2, ![4096, 50]⟩
abbrev SPad : Shape := ⟨2, ![4096, 64]⟩
abbrev SFlat : Shape := ⟨1, ![262144]⟩
abbrev SEmb : Shape := ⟨2, ![1000000, 64]⟩
abbrev STab : Shape := ⟨2, ![507904, 128]⟩
abbrev SSum : Shape := ⟨2, ![4096, 64]⟩

/-- The table row that holds vocabulary row `v`. -/
def trow (v : BitVec 32) : BitVec 32 := (v >>> 7) * 64#32 + (v &&& 63#32)
/-- The column offset (0 or 64) at which vocabulary row `v` starts in its table row. -/
def tcol (v : BitVec 32) : BitVec 32 := ((v >>> 6) &&& 1#32) * 64#32

/-- The zero the sums start from. -/
def zeroF : F .f32 := FloatOps.ofBits .f32 0x00000000#32

/-- The flat padded index array read at a natural position (zero outside). -/
def flatAt (flat : IVec SFlat 32) (n : Nat) : BitVec 32 := if h : n < 262144 then flat (ix1 ⟨n, h⟩) else 0#32

/-- The relaid table read at natural coordinates (zero outside). -/
def tabAt (tab : FVec F STab .f32) (r c : Nat) : F .f32 :=
  if h : r < 507904 ∧ c < 128 then tab (ix2 ⟨r, h.1⟩ ⟨c, h.2⟩) else zeroF

/-- The flat padded index array of an index array: word `64 b + j` is index `j` of bag `b` for `j < 50`, zero for the pad. -/
def flatOf (idx : IVec SIdx 32) : IVec SFlat 32 := fun i =>
  if h : (i 0).val % 64 < 50 then idx (ix2 ⟨(i 0).val / 64, by have : (i 0).val < 262144 := (i 0).isLt; omega⟩ ⟨(i 0).val % 64, h⟩) else 0#32

/-- Entry `c` of the `j`-th row of bag `b`, read off the relaid table. -/
def bagTerm (flat : IVec SFlat 32) (tab : FVec F STab .f32) (b c j : Nat) : F .f32 :=
  tabAt tab (trow (flatAt flat (64 * b + j))).toNat ((tcol (flatAt flat (64 * b + j))).toNat + c)

/-- The sum of the first `n` rows of bag `b` at column `c`, left to right from zero. -/
def bagPartial (flat : IVec SFlat 32) (tab : FVec F STab .f32) (b c : Nat) : Nat → F .f32
  | 0 => zeroF
  | n + 1 => FloatOps.addf (bagPartial flat tab b c n) (bagTerm flat tab b c n)

/-- The bag sums: entry `(b, c)` is the sum of bag `b`'s 50 rows at column `c`. -/
def bagSums (flat : IVec SFlat 32) (tab : FVec F STab .f32) : FVec F SSum .f32 :=
  fun i => bagPartial flat tab (i 0).val (i 1).val 50

/-- What the relaid table is known to hold: vocabulary row `v` at table row `v / 128 * 64 + v % 64`, columns
    `(v / 64 % 2) * 64 + c`. (Rows of the table past the vocabulary's end are not constrained.) -/
def TableOK (emb : FVec F SEmb .f32) (tab : FVec F STab .f32) : Prop :=
  ∀ (v : Nat) (hv : v < 1000000) (c : Nat) (hc : c < 64),
    tabAt tab (v / 128 * 64 + v % 64) ((v / 64 % 2) * 64 + c) = emb (ix2 ⟨v, hv⟩ ⟨c, hc⟩)

end Cert.Proof.Spec

end
-- ==== Proof.TileMath.lean ====
/-
  Word arithmetic for the table layout: the row and column at which a vocabulary row is found in the relaid table,
  as natural numbers; that the lane-wise vector operations compute them; how the flat padded index array reads the
  index array; and that a bag's term is the embedding row once the table is known to be the relaid embeddings.
-/
import proofs.«203835_g19404662243951_cont_8to1_399_35_alg».proof.Proof.Spec

namespace Cert.Proof.TileMath

open Idealize.ShloMosaic Idealize.ShloMosaic.ValueIdx Cert.Proof.Spec

/-! ## Shifts and masks as division and remainder -/

theorem shr7_toNat (v : BitVec 32) : (v >>> 7).toNat = v.toNat / 128 := by
  rw [BitVec.toNat_ushiftRight, Nat.shiftRight_eq_div_pow]

theorem shr6_toNat (v : BitVec 32) : (v >>> 6).toNat = v.toNat / 64 := by
  rw [BitVec.toNat_ushiftRight, Nat.shiftRight_eq_div_pow]

theorem and63_toNat (v : BitVec 32) : (v &&& 63#32).toNat = v.toNat % 64 := by
  rw [BitVec.toNat_and]; exact Nat.and_two_pow_sub_one_eq_mod v.toNat 6

theorem and1_toNat (v : BitVec 32) : (v &&& 1#32).toNat = v.toNat % 2 := by
  rw [BitVec.toNat_and]; exact Nat.and_two_pow_sub_one_eq_mod v.toNat 1

/-! ## The table row and column of a vocabulary row -/

/-- The column offset is `64` times bit 6 of the word. -/
theorem tcol_toNat (v : BitVec 32) : (tcol v).toNat = (v.toNat / 64 % 2) * 64 := by
  unfold tcol
  rw [BitVec.toNat_mul, and1_toNat, shr6_toNat]
  have : v.toNat / 64 % 2 < 2 := Nat.mod_lt _ (by decide)
  show (v.toNat / 64 % 2) * 64 % 4294967296 = _
  omega

/-- The table row: no product or sum wraps, since `v / 128 * 64 + 63 < 2 ^ 31 + 64`. -/
theorem trow_toNat (v : BitVec 32) : (trow v).toNat = v.toNat / 128 * 64 + v.toNat % 64 := by
  unfold trow
  rw [BitVec.toNat_add, BitVec.toNat_mul, and63_toNat, shr7_toNat]
  have := v.isLt
  show (v.toNat / 128 * 64 % 4294967296 + v.toNat % 64) % 4294967296 = _
  omega

/-- A vocabulary row below one million lies in the table: `999999 / 128 * 64 + 63 = 500031 < 507904`. -/
theorem trow_lt (v : BitVec 32) (h : v.toNat ≤ 999999) : (trow v).toNat < 507904 := by
  rw [trow_toNat]; omega

/-- Both at once, in the form the gather's range condition is asked. -/
theorem trow_spec (v : BitVec 32) (h : v.toNat ≤ 999999) :
    (trow v).toNat = v.toNat / 128 * 64 + v.toNat % 64 ∧ (trow v).toNat < 507904 :=
  ⟨trow_toNat v, trow_lt v h⟩

/-- The column offset is the word `0` or the word `64`. -/
theorem tcol_cases (v : BitVec 32) : tcol v = 0#32 ∨ tcol v = 64#32 := by
  have h := tcol_toNat v
  rcases Nat.mod_two_eq_zero_or_one (v.toNat / 64) with h2 | h2
  · left; apply BitVec.eq_of_toNat_eq; rw [h, h2]; rfl
  · right; apply BitVec.eq_of_toNat_eq; rw [h, h2]; rfl

theorem tcol_toNat_cases (v : BitVec 32) : (tcol v).toNat = 0 ∨ (tcol v).toNat = 64 := by
  rcases tcol_cases v with h | h <;> rw [h]
  · left; rfl
  · right; rfl

/-- A column offset leaves room for a 64-wide row in the 128 columns. -/
theorem tcol_add_lt (v : BitVec 32) (c : Nat) (hc : c < 64) : (tcol v).toNat + c < 128 := by
  rcases tcol_toNat_cases v with h | h <;> omega

/-- A word that is non-negative and at most `999999` read signed is at most `999999` read unsigned. -/
theorem toNat_le_of_signed (v : BitVec 32) (h0 : 0 ≤ v.toInt) (h1 : v.toInt ≤ 999999) : v.toNat ≤ 999999 := by
  have hv := v.isLt
  rw [BitVec.toInt_eq_toNat_cond] at h0 h1
  split at h0 <;> omega

/-! ## The vector unit's operations, lane by lane -/

/-- The vector unit's logical shift right by a literal amount below the width is the word's shift. -/
theorem shrui_lane (x : BitVec 32) (k : Nat) (hk : k < 32) :
    IntOp.shrui .vector x (BitVec.ofNat 32 k) = x >>> k := by
  have hk' : (BitVec.ofNat 32 k).toNat = k := by
    rw [BitVec.toNat_ofNat]; exact Nat.mod_eq_of_lt (by omega)
  unfold IntOp.shrui
  rw [if_pos (by rw [hk']; exact hk)]
  show x >>> (BitVec.ofNat 32 k).toNat = _
  rw [hk']

/-- `(x >>> 7) * 64 + (x &&& 63)` on vectors is `trow` in every lane. -/
theorem trow_lane {s : Shape} (x : IVec s 32) (j : s.Idx) :
    addi (muli (shrui x (broadcast s 7#32)) (broadcast s 64#32)) (andi x (broadcast s 63#32)) j
      = trow (x j) := by
  show IntOp.addi (IntOp.muli (IntOp.shrui .vector (x j) 7#32) 64#32) (IntOp.andi (x j) 63#32) = _
  rw [show (7#32 : BitVec 32) = BitVec.ofNat 32 7 from rfl, shrui_lane _ 7 (by decide)]
  rfl

/-- `((x >>> 6) &&& 1) * 64` on vectors is `tcol` in every lane. -/
theorem tcol_lane {s : Shape} (x : IVec s 32) (j : s.Idx) :
    muli (andi (shrui x (broadcast s 6#32)) (broadcast s 1#32)) (broadcast s 64#32) j
      = tcol (x j) := by
  show IntOp.muli (IntOp.andi (IntOp.shrui .vector (x j) 6#32) 1#32) 64#32 = _
  rw [show (6#32 : BitVec 32) = BitVec.ofNat 32 6 from rfl, shrui_lane _ 6 (by decide)]
  rfl

theorem trow_lanes {s : Shape} (x : IVec s 32) :
    addi (muli (shrui x (broadcast s 7#32)) (broadcast s 64#32)) (andi x (broadcast s 63#32))
      = fun j => trow (x j) := funext (trow_lane x)

theorem tcol_lanes {s : Shape} (x : IVec s 32) :
    muli (andi (shrui x (broadcast s 6#32)) (broadcast s 1#32)) (broadcast s 64#32)
      = fun j => tcol (x j) := funext (tcol_lane x)

/-! ## The flat padded index array -/

/-- Word `64 b + j` of the flat array is index `j` of bag `b`. -/
theorem flatAt_flatOf (idx : IVec SIdx 32) (b j : Nat) (hb : b < 4096) (hj : j < 50) :
    flatAt (flatOf idx) (64 * b + j) = idx (ix2 ⟨b, hb⟩ ⟨j, hj⟩) := by
  have hn : 64 * b + j < 262144 := by omega
  have h1 : (64 * b + j) % 64 = j := by omega
  have h2 : (64 * b + j) / 64 = b := by omega
  unfold flatAt
  rw [dif_pos hn]
  unfold flatOf
  have hc : ((ix1 (⟨64 * b + j, hn⟩ : Fin 262144)) 0).val % 64 < 50 := by
    show (64 * b + j) % 64 < 50
    omega
  rw [dif_pos hc]
  congr 1
  funext d
  match d with
  | ⟨0, _⟩ => exact Fin.ext h2
  | ⟨1, _⟩ => exact Fin.ext h1

/-- The pad words are zero. -/
theorem flatAt_flatOf_pad (idx : IVec SIdx 32) (b j : Nat) (hj : 50 ≤ j) (hj' : j < 64) :
    flatAt (flatOf idx) (64 * b + j) = 0#32 := by
  unfold flatAt
  split
  · rename_i hn
    unfold flatOf
    have hc : ¬ ((ix1 (⟨64 * b + j, hn⟩ : Fin 262144)) 0).val % 64 < 50 := by
      show ¬ (64 * b + j) % 64 < 50
      omega
    rw [dif_neg hc]
  · rfl

/-- The flat array read at a position in range is the array's entry. -/
theorem flatAt_eq (flat : IVec SFlat 32) (n : Nat) (hn : n < 262144) : flatAt flat n = flat (ix1 ⟨n, hn⟩) := by
  unfold flatAt; rw [dif_pos hn]

/-! ## A bag's term is the embedding row -/

variable {F : FTy → Type} [FloatOps F]

/-- The table read at coordinates in range is the table's entry. -/
theorem tabAt_eq (tab : FVec F STab .f32) (r c : Nat) (hr : r < 507904) (hc : c < 128) :
    tabAt tab r c = tab (ix2 ⟨r, hr⟩ ⟨c, hc⟩) := by
  unfold tabAt; rw [dif_pos ⟨hr, hc⟩]

/-- Once the table holds the relaid embeddings, entry `c` of the table row of a word below one million is entry
    `c` of that vocabulary row. -/
theorem tabAt_trow_tcol {emb : FVec F SEmb .f32} {tab : FVec F STab .f32} (h : TableOK emb tab)
    (v : BitVec 32) (hv : v.toNat < 1000000) (c : Nat) (hc : c < 64) :
    tabAt tab (trow v).toNat ((tcol v).toNat + c) = emb (ix2 ⟨v.toNat, hv⟩ ⟨c, hc⟩) := by
  rw [trow_toNat, tcol_toNat]
  exact h v.toNat hv c hc

theorem bagTerm_of_tableOK {emb : FVec F SEmb .f32} {tab : FVec F STab .f32} (h : TableOK emb tab)
    (flat : IVec SFlat 32) (b c j : Nat) (hc : c < 64) (hv : (flatAt flat (64 * b + j)).toNat < 1000000) :
    bagTerm flat tab b c j = emb (ix2 ⟨(flatAt flat (64 * b + j)).toNat, hv⟩ ⟨c, hc⟩) := by
  unfold bagTerm
  exact tabAt_trow_tcol h _ hv c hc

/-- The same over an index array whose words are non-negative and at most `999999` read signed. -/
theorem bagTerm_flatOf {emb : FVec F SEmb .f32} {tab : FVec F STab .f32} (h : TableOK emb tab)
    (idx : IVec SIdx 32) (b c j : Nat) (hb : b < 4096) (hj : j < 50) (hc : c < 64)
    (h0 : 0 ≤ (idx (ix2 ⟨b, hb⟩ ⟨j, hj⟩)).toInt) (h1 : (idx (ix2 ⟨b, hb⟩ ⟨j, hj⟩)).toInt ≤ 999999) :
    bagTerm (flatOf idx) tab b c j
      = emb (ix2 ⟨(idx (ix2 ⟨b, hb⟩ ⟨j, hj⟩)).toNat, by have := toNat_le_of_signed _ h0 h1; omega⟩ ⟨c, hc⟩) := by
  have hle := toNat_le_of_signed _ h0 h1
  unfold bagTerm
  rw [flatAt_flatOf idx b j hb hj]
  exact tabAt_trow_tcol h _ (by omega) c hc

end Cert.Proof.TileMath
-- ==== Proof.FfnnSpec.lean ====
/-
  The feed-forward head of the kernel, stated once over literal shapes and independent of any printed program.

  A block of 512 bag sums `x : [512, 64]` is scaled entrywise by a constant `k` (the program's constant for 1/50: the
  mean over a bag's 50 rows), sent through a hidden layer `h = max (x·k @ W1 + b1, 0)` of width 256, an output layer
  `logits = h @ W2 + b2` of width 50, and a row-wise log-softmax: with `m` the row's maximum and `sh = logits - m`,
  the result is `sh - log (Σ exp sh)`. The whole array of 4096 bag sums is treated block by block: row `512 t + r` of
  the result is row `r` of the head applied to rows `[512 t, 512 t + 512)` of the sums.
-/
import Idealize.ShloMosaic.PureOps
import Idealize.ShloMosaic.Lib.ValueIdx

noncomputable section

namespace Cert.Proof.Ffnn

open Idealize.ShloMosaic Idealize.ShloMosaic.ValueIdx

variable {F : FTy → Type} [FloatOps F]

/-- A block of sums, the two weight matrices, the two bias rows, the hidden block, the result block, a column of row
    statistics (flat and as a one-column matrix), the whole sums and the whole result. -/
abbrev SX : Shape := ⟨2, ![512, 64]⟩
abbrev SW1 : Shape := ⟨2, ![64, 256]⟩
abbrev SB1 : Shape := ⟨2, ![1, 256]⟩
abbrev SW2 : Shape := ⟨2, ![256, 50]⟩
abbrev SB2 : Shape := ⟨2, ![1, 50]⟩
abbrev SH : Shape := ⟨2, ![512, 256]⟩
abbrev SO : Shape := ⟨2, ![512, 50]⟩
abbrev SR : Shape := ⟨1, ![512]⟩
abbrev SR1 : Shape := ⟨2, ![512, 1]⟩
abbrev SSum : Shape := ⟨2, ![4096, 64]⟩
abbrev SOut : Shape := ⟨2, ![4096, 50]⟩

theorem casts_SX : SX.ShapeCasts SX := by decide
theorem casts_SB1 : SB1.ShapeCasts SB1 := by decide
theorem casts_SB2 : SB2.ShapeCasts SB2 := by decide
theorem casts_SR_SR1 : SR.ShapeCasts SR1 := by decide
theorem bcast_SB1_SH : SB1.Broadcasts SH := by decide
theorem bcast_SB2_SO : SB2.Broadcasts SO := by decide
theorem bcast_SR1_SO : SR1.Broadcasts SO := by decide
theorem reduces_SO_SR : SO.Reduces [1] SR := by decide
theorem dot1_wf : DotDims.WF SX SW1 SH [1] [0] [0] [1] [] [] := by decide
theorem dot2_wf : DotDims.WF SH SW2 SO [1] [0] [0] [1] [] [] := by decide

/-- The two products contract the left factor's columns with the right factor's rows. -/
def dot1 : DotDims SX SW1 SH where
  lhsContracting := [1]
  rhsContracting := [0]
  lhsNonContracting := [0]
  rhsNonContracting := [1]
  lhsBatch := []
  rhsBatch := []
  wf := dot1_wf
def dot2 : DotDims SH SW2 SO where
  lhsContracting := [1]
  rhsContracting := [0]
  lhsNonContracting := [0]
  rhsNonContracting := [1]
  lhsBatch := []
  rhsBatch := []
  wf := dot2_wf

/-- The head on one block of 512 sums: scale by `k`, hidden layer with a rectifier, output layer, row-wise
    log-softmax. -/
def block (k : F .f32) (x : FVec F SX .f32) (w1 : FVec F SW1 .f32) (b1 : FVec F SB1 .f32) (w2 : FVec F SW2 .f32)
    (b2 : FVec F SB2 .f32) : FVec F SO .f32 :=
  have x1 : FVec F SX .f32 := shapeCast SX x casts_SX
  have xs : FVec F SX .f32 := mulf x1 (broadcast SX k)
  have z1 : FVec F SH .f32 := matmul dot1 none xs w1 (constant SH .f32 0x00000000#32)
  have c1 : FVec F SH .f32 := broadcastTo SH (shapeCast SB1 b1 casts_SB1) bcast_SB1_SH
  have a1 : FVec F SH .f32 := addf z1 c1
  have h : FVec F SH .f32 := maximumf a1 (broadcast SH (Scalar.ofBits .f32 0x00000000#32))
  have z2 : FVec F SO .f32 := matmul dot2 none h w2 (constant SO .f32 0x00000000#32)
  have c2 : FVec F SO .f32 := broadcastTo SO (shapeCast SB2 b2 casts_SB2) bcast_SB2_SO
  have logits : FVec F SO .f32 := addf z2 c2
  have m : FVec F SR .f32 := multiReduction .maximumf [1] SR logits 0xFF800000#32 reduces_SO_SR (.inl rfl) rfl
  have mb : FVec F SO .f32 := broadcastTo SO (shapeCast SR1 m casts_SR_SR1) bcast_SR1_SO
  have sh : FVec F SO .f32 := subf logits mb
  have e : FVec F SO .f32 := exp sh
  have se : FVec F SR .f32 := multiReduction .add [1] SR e 0x00000000#32 reduces_SO_SR (.inl rfl) rfl
  have ls : FVec F SR1 .f32 := log (shapeCast SR1 se casts_SR_SR1)
  subf sh (broadcastTo SO ls bcast_SR1_SO)

/-- Rows `[512 t, 512 t + 512)` of the sums, as a block. -/
def rowsOf (s : FVec F SSum .f32) (t : Nat) : FVec F SX .f32 := fun j =>
  if h : 512 * t + (j 0).val < 4096 then s (ix2 ⟨512 * t + (j 0).val, h⟩ (j 1)) else FloatOps.ofBits .f32 0x00000000#32

/-- The head on the whole array of sums, block by block: row `512 t + r` is row `r` of the head on block `t`. -/
def out (k : F .f32) (s : FVec F SSum .f32) (w1 : FVec F SW1 .f32) (b1 : FVec F SB1 .f32) (w2 : FVec F SW2 .f32)
    (b2 : FVec F SB2 .f32) : FVec F SOut .f32 := fun i =>
  block k (rowsOf s ((i 0).val / 512)) w1 b1 w2 b2
    (ix2 ⟨(i 0).val % 512, Nat.mod_lt _ (by decide)⟩ (i 1))

end Cert.Proof.Ffnn

end
-- ==== Proof.RefRead.lean ====
/-
  The reference function read index by index at the ideal values, where every word of the index array is at most
  999999 read unsigned (so non-negative and in range read signed).  There no index is negative, so the wrap is the
  identity; every start index names a row, so the in-range mask is all ones and the select against the NaN constant
  keeps the gathered row; the gather reads row `idx (b, j)` of the table.  The sum over a bag's fifty positions is
  a sum over `Fin 50`, division by fifty is the product with the real `1 / 50`, the two matrix products are sums
  over the contracted coordinate, a row's maximum is the fold of `max` from the bottom element, and the rest is
  elementwise.  The head of the network is stated once, row by row, on the extended reals (`headRow`), and the
  reference's result at `(b, o)` is that head on bag `b`'s mean.
-/
import proofs.«203835_g19404662243951_cont_8to1_399_35_alg».proof.Proof.RefSpec
import Idealize.ShloMosaic.Lib.KernelVsHost
import Idealize.ShloMosaic.Lib.StackMember

noncomputable section

namespace Cert.Proof.Ref

open Cert.ReferenceIdeal Cert.ReferenceIdeal.Gen Idealize.ShloMosaic Idealize.ShloMosaic.ValueIdx
open scoped BigOperators

/-! ## The head of the network on one row, on the extended reals -/

/-- The hidden layer on one row: `max (x · W1 + b1) 0`. -/
def hidRow (x : Fin 64 → EReal) (W1 : FVec Ideal S64x256 .f32) (b1 : Fin 256 → EReal) (h : Fin 256) : EReal :=
  max ((∑ c : Fin 64, x c * W1 (ix2 c h)) + b1 h) 0

/-- The logits on one row: `h · W2 + b2`. -/
def logitRow (hd : Fin 256 → EReal) (W2 : FVec Ideal S256x50 .f32) (b2 : Fin 50 → EReal) (o : Fin 50) : EReal :=
  (∑ h : Fin 256, hd h * W2 (ix2 h o)) + b2 o

/-- A row's maximum: the fold of `max` over its fifty entries from the bottom element. -/
def maxRow (l : Fin 50 → EReal) : EReal := (Finset.univ : Finset (Fin 50)).fold max ⊥ l

/-- The logarithm of the softmax of one row. -/
def lsmRow (l : Fin 50 → EReal) (o : Fin 50) : EReal :=
  (l o - maxRow l) - Ideal.log (∑ o' : Fin 50, Ideal.exp (l o' - maxRow l))

/-- The whole head on one row. -/
def headRow (x : Fin 64 → EReal) (W1 : FVec Ideal S64x256 .f32) (b1 : Fin 256 → EReal) (W2 : FVec Ideal S256x50 .f32)
    (b2 : Fin 50 → EReal) : Fin 50 → EReal :=
  lsmRow (logitRow (hidRow x W1 b1) W2 b2)

/-! ## Words and constants -/

/-- A word at most 999999 reads the same signed and unsigned. -/
theorem toInt_of_le {w : BitVec 32} (h : w.toNat ≤ 999999) : w.toInt = w.toNat := by
  have hc := BitVec.toInt_eq_toNat_cond w
  split at hc <;> omega

theorem slt_zero_of_le {w : BitVec 32} (h : w.toNat ≤ 999999) : IntOp.cmpi .slt w 0#32 = 0#1 := by
  have hi := toInt_of_le h
  have h0 : (0#32 : BitVec 32).toInt = 0 := by decide
  have hs : w.slt 0#32 = false := by
    simp only [BitVec.slt, h0]
    exact decide_eq_false (by omega)
  show BitVec.ofBool (w.slt 0#32) = 0#1
  rw [hs]; rfl

theorem sge_zero_of_le {w : BitVec 32} (h : w.toNat ≤ 999999) : IntOp.cmpi .sge w 0#32 = 1#1 := by
  have hi := toInt_of_le h
  have h0 : (0#32 : BitVec 32).toInt = 0 := by decide
  have hs : (0#32 : BitVec 32).sle w = true := by
    simp only [BitVec.sle, h0]
    exact decide_eq_true (by omega)
  show BitVec.ofBool ((0#32 : BitVec 32).sle w) = 1#1
  rw [hs]; rfl

theorem sle_max_of_le {w : BitVec 32} (h : w.toNat ≤ 999999) : IntOp.cmpi .sle w 999999#32 = 1#1 := by
  have hi := toInt_of_le h
  have h9 : (999999#32 : BitVec 32).toInt = 999999 := by decide
  have hs : w.sle 999999#32 = true := by
    simp only [BitVec.sle, h9]
    exact decide_eq_true (by omega)
  show BitVec.ofBool (w.sle 999999#32) = 1#1
  rw [hs]; rfl

/-- A left fold by "and" from one over ones is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a List.mem_cons_self]; rfl
    rw [List.foldl_cons, ha]
    exact foldl_andi_one f l fun n hn => h n (List.mem_cons_of_mem _ hn)

/-- The pattern `0x42480000` is fifty. -/
theorem ofBits_fifty : Ideal.ofBits .f32 0x42480000#32 = ((50 : ℝ) : EReal) := by
  simp [Ideal.ofBits, Ideal.ieee, -EReal.coe_mul]; norm_num

/-- The pattern `0xFF800000` is minus infinity, the bottom element. -/
theorem ofBits_neg_inf : Ideal.ofBits .f32 0xFF800000#32 = ⊥ := by
  simp [Ideal.ofBits, Ideal.ieee]

/-! ## The gather at an index -/

/-- The lookup's gather read at `(b, j, c)`: the table at the start index `st (b, j, 0)`, read signed and
    clamped into the table, column `c`. -/
theorem gather_apply {α : Type} (x : S1000000x64.Idx → α) (st : IVec S4096x50x1 32) (b : Fin 4096) (j : Fin 50) (c : Fin 64) :
    Host.gather gather_S1000000x64_S4096x50x1_S4096x50x64_2_0_n_n_0_2_164 x st (ix3 b j c)
      = x (ix2 ⟨min (st (ix3 b j (0 : Fin 1))).toInt.toNat (1000000 - 1), by omega⟩ c) := by
  unfold Host.gather
  congr 1
  funext a
  refine Fin.ext ?_
  match a with
  | ⟨0, _⟩ =>
    show gather_S1000000x64_S4096x50x1_S4096x50x64_2_0_n_n_0_2_164.start (ix3 b j c) st 0
      + gather_S1000000x64_S4096x50x1_S4096x50x64_2_0_n_n_0_2_164.batchCoord (ix3 b j c) 0
      + gather_S1000000x64_S4096x50x1_S4096x50x64_2_0_n_n_0_2_164.offCoord (ix3 b j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x64_S4096x50x1_S4096x50x64_2_0_n_n_0_2_164.startIndexMap from
      List.mem_singleton.mpr rfl)]
    have hsi : gather_S1000000x64_S4096x50x1_S4096x50x64_2_0_n_n_0_2_164.siIdx (ix3 b j c)
        ⟨List.idxOf (0 : Fin 2) gather_S1000000x64_S4096x50x1_S4096x50x64_2_0_n_n_0_2_164.startIndexMap,
          List.idxOf_lt_length_iff.2 (List.mem_singleton.mpr rfl)⟩ = ix3 b j (0 : Fin 1) := by
      funext e; refine Fin.ext ?_
      match e with
      | ⟨0, _⟩ => rfl
      | ⟨1, _⟩ => rfl
      | ⟨2, _⟩ => rfl
    rw [hsi]
    rfl
  | ⟨1, _⟩ =>
    show gather_S1000000x64_S4096x50x1_S4096x50x64_2_0_n_n_0_2_164.start (ix3 b j c) st 1
      + gather_S1000000x64_S4096x50x1_S4096x50x64_2_0_n_n_0_2_164.batchCoord (ix3 b j c) 1
      + gather_S1000000x64_S4096x50x1_S4096x50x64_2_0_n_n_0_2_164.offCoord (ix3 b j c) 1 = c.val
    rw [GatherDims.batchCoord_eq_zero _ _ _ List.not_mem_nil]
    unfold GatherDims.start
    rw [dif_neg (show (1 : Fin 2) ∉ gather_S1000000x64_S4096x50x1_S4096x50x64_2_0_n_n_0_2_164.startIndexMap from by decide)]
    simp only [Nat.add_zero, Nat.zero_add]
    rfl

/-! ## The lookup -/

section Lookup

variable (idx : IVec S4096x50 32) (hr : ∀ i, (idx i).toNat ≤ 999999)
include hr

/-- No index is negative: the wrap is the identity. -/
theorem wrapped_eq : wrapped idx = idx := by
  funext i
  show Scalar.select (IntOp.cmpi .slt (idx i) 0#32) (IntOp.addi (idx i) 1000000#32) (idx i) = idx i
  rw [slt_zero_of_le (hr i), select_zero]

/-- The start index at `(b, j, ·)` is `idx (b, j)`. -/
theorem starts_apply (b : Fin 4096) (j : Fin 50) (k : Fin 1) : starts idx (ix3 b j k) = idx (ix2 b j) := by
  unfold starts
  rw [wrapped_eq idx hr]
  exact broadcastInDim_apply ![0, 1] bcast_S4096x50_S4096x50x1_0_1 idx (ix3 b j k) (ix2 b j) (by
    intro a
    match a with
    | ⟨0, _⟩ => rfl
    | ⟨1, _⟩ => rfl)

/-- Every start index names a row: the mask is all ones. -/
theorem inRange_apply (i : S4096x50.Idx) : inRange idx i = 1#1 := by
  unfold inRange
  rw [Host.reduce_eq_foldl]
  refine foldl_andi_one _ _ fun q _ => ?_
  obtain ⟨b, j, k, rfl⟩ : ∃ (b : Fin 4096) (j : Fin 50) (k : Fin 1), q = ix3 b j k := ⟨q 0, q 1, q 2, eq_ix3 q⟩
  show IntOp.andi (IntOp.cmpi .sge (starts idx (ix3 b j k)) 0#32) (IntOp.cmpi .sle (starts idx (ix3 b j k)) 999999#32) = 1#1
  rw [starts_apply idx hr, sge_zero_of_le (hr _), sle_max_of_le (hr _)]
  rfl

variable (emb : FVec Ideal S1000000x64 .f32)

/-- The rows looked up: row `idx (b, j)` of the table at `(b, j, ·)`. -/
theorem taken_apply (b : Fin 4096) (j : Fin 50) (c : Fin 64) :
    taken idx emb (ix3 b j c) = emb (ix2 ⟨(idx (ix2 b j)).toNat, by have := hr (ix2 b j); omega⟩ c) := by
  unfold taken
  rw [select_apply, broadcastInDim_apply ![0, 1] bcast_S4096x50_S4096x50x64_0_1 (inRange idx) (ix3 b j c) (ix2 b j) (by
      intro a
      match a with
      | ⟨0, _⟩ => rfl
      | ⟨1, _⟩ => rfl),
    inRange_apply idx hr, select_one, gather_apply]
  have hv : min (starts idx (ix3 b j (0 : Fin 1))).toInt.toNat (1000000 - 1) = (idx (ix2 b j)).toNat := by
    rw [starts_apply idx hr, toInt_of_le (hr _), Int.toNat_natCast]
    have := hr (ix2 b j)
    omega
  have hf : (⟨min (starts idx (ix3 b j (0 : Fin 1))).toInt.toNat (1000000 - 1), by omega⟩ : Fin 1000000)
      = ⟨(idx (ix2 b j)).toNat, by have := hr (ix2 b j); omega⟩ := Fin.ext hv
  rw [hf]

/-- The mean of bag `b` at column `c`: the sum of its fifty rows there, times the real `1 / 50`. -/
theorem mean_apply (b : Fin 4096) (c : Fin 64) :
    mean idx emb (ix2 b c)
      = (∑ j : Fin 50, emb (ix2 ⟨(idx (ix2 b j)).toNat, by have := hr (ix2 b j); omega⟩ c)) * ((1 / 50 : ℝ) : EReal) := by
  have hR : S4096x50x64.Reduces [1] S4096x64 := by decide
  show Ideal.div (Ideal.hostReduceAdd reducesTo_S4096x50x64_S4096x64_d1 (taken idx emb) (Ideal.ofBits .f32 0x00000000#32) (ix2 b c))
      (Ideal.ofBits .f32 0x42480000#32) = _
  rw [ofBits_fifty, Ideal.div_coe (by norm_num), Ideal.hostReduceAdd_single _ hR, Ideal.ofBits_zero_f32, zero_add]
  refine congrArg (fun z : EReal => z * ((1 / 50 : ℝ) : EReal)) ?_
  refine Finset.sum_congr rfl fun j _ => ?_
  have hl : hR.lift (ix2 b c) j = ix3 b j c := by
    funext a; refine Fin.ext ?_
    match a with
    | ⟨0, _⟩ => rfl
    | ⟨1, _⟩ => rfl
    | ⟨2, _⟩ => rfl
  rw [hl]
  exact taken_apply idx hr emb b j c

end Lookup

/-! ## The head -/

/-- The hidden layer at `(b, h)`. -/
theorem hidden_apply (x : FVec Ideal S4096x64 .f32) (W1 : FVec Ideal S64x256 .f32) (b1 : FVec Ideal S256 .f32)
    (b : Fin 4096) (h : Fin 256) :
    hidden x W1 b1 (ix2 b h) = hidRow (fun c => x (ix2 b c)) W1 (fun h => b1 (ix1 h)) h := by
  have hd : dot_S4096x64_S64x256_S4096x256_1_0_0_1_n_n = DotDims.plain 4096 64 256 := rfl
  show max (Host.dotGeneral dot_S4096x64_S64x256_S4096x256_1_0_0_1_n_n none x W1 (ix2 b h)
      + broadcastInDim S4096x256 ![0, 1] bcast_S1x256_S4096x256_0_1 (broadcastInDim S1x256 ![1] bcast_S256_S1x256_1 b1) (ix2 b h))
      (Ideal.ofBits .f32 0x00000000#32) = _
  rw [hd, StackMember.dotGeneral_plain_apply, Ideal.ofBits_zero_f32, broadcastInDim_oneRow_apply,
    broadcastInDim_apply ![1] bcast_S256_S1x256_1 b1 (ix2 (0 : Fin 1) h) (ix1 h) (by
      intro a
      match a with
      | ⟨0, _⟩ => rfl)]
  rfl

/-- The logits at `(b, o)`. -/
theorem logits_apply (hd : FVec Ideal S4096x256 .f32) (W2 : FVec Ideal S256x50 .f32) (b2 : FVec Ideal S50 .f32)
    (b : Fin 4096) (o : Fin 50) :
    logits hd W2 b2 (ix2 b o) = logitRow (fun h => hd (ix2 b h)) W2 (fun o => b2 (ix1 o)) o := by
  have hdd : dot_S4096x256_S256x50_S4096x50_1_0_0_1_n_n = DotDims.plain 4096 256 50 := rfl
  show Host.dotGeneral dot_S4096x256_S256x50_S4096x50_1_0_0_1_n_n none hd W2 (ix2 b o)
      + broadcastInDim S4096x50 ![0, 1] bcast_S1x50_S4096x50_0_1 (broadcastInDim S1x50 ![1] bcast_S50_S1x50_1 b2) (ix2 b o) = _
  rw [hdd, StackMember.dotGeneral_plain_apply, broadcastInDim_oneRow_apply,
    broadcastInDim_apply ![1] bcast_S50_S1x50_1 b2 (ix2 (0 : Fin 1) o) (ix1 o) (by
      intro a
      match a with
      | ⟨0, _⟩ => rfl)]
  rfl

/-- A row's maximum. -/
theorem rowMax_apply (x : FVec Ideal S4096x50 .f32) (b : Fin 4096) :
    rowMax x (ix1 b) = maxRow (fun o => x (ix2 b o)) := by
  have hR : S4096x50.Reduces [1] S4096 := by decide
  show max (Ideal.ofBits .f32 0xFF800000#32)
      (Host.reduce FloatOps.maximumf x (constant S_ .f32 0xFF800000#32) reducesTo_S4096x50_S4096_d1 h_S_ (ix1 b)) = _
  rw [Host.reduce_eq_fold_single FloatOps.maximumf x _ reducesTo_S4096x50_S4096_d1 hR h_S_ (ix1 b), ofBits_neg_inf,
    max_eq_right bot_le]
  show (Finset.univ : Finset (Fin 50)).fold max (Ideal.ofBits .f32 0xFF800000#32) (x ∘ hR.lift (ix1 b)) = _
  rw [ofBits_neg_inf]
  have hl : x ∘ hR.lift (ix1 b) = fun o => x (ix2 b o) := by
    funext o
    show x (hR.lift (ix1 b) o) = x (ix2 b o)
    congr 1
    funext a; refine Fin.ext ?_
    match a with
    | ⟨0, _⟩ => rfl
    | ⟨1, _⟩ => rfl
  rw [hl]
  rfl

/-- A row less its maximum. -/
theorem shifted_apply (x : FVec Ideal S4096x50 .f32) (b : Fin 4096) (o : Fin 50) :
    shifted x (ix2 b o) = x (ix2 b o) - maxRow (fun o => x (ix2 b o)) := by
  show x (ix2 b o) - broadcastInDim S4096x50 ![0, 1] bcast_S4096x1_S4096x50_0_1
      (broadcastInDim S4096x1 ![0] bcast_S4096_S4096x1_0 (rowMax x)) (ix2 b o) = _
  rw [broadcastInDim_apply ![0, 1] bcast_S4096x1_S4096x50_0_1 _ (ix2 b o) (ix2 b (0 : Fin 1)) (by
      intro a
      match a with
      | ⟨0, _⟩ => rfl
      | ⟨1, _⟩ => rfl),
    broadcastInDim_apply ![0] bcast_S4096_S4096x1_0 (rowMax x) (ix2 b (0 : Fin 1)) (ix1 b) (by
      intro a
      match a with
      | ⟨0, _⟩ => rfl),
    rowMax_apply]

/-- The logarithm of the softmax at `(b, o)`. -/
theorem logSoftmax_apply (x : FVec Ideal S4096x50 .f32) (b : Fin 4096) (o : Fin 50) :
    logSoftmax x (ix2 b o) = lsmRow (fun o => x (ix2 b o)) o := by
  have hR : S4096x50.Reduces [1] S4096 := by decide
  show shifted x (ix2 b o) - broadcastInDim S4096x50 ![0, 1] bcast_S4096x1_S4096x50_0_1
      (Host.log (broadcastInDim S4096x1 ![0] bcast_S4096_S4096x1_0
        (Host.reduceAdd (Host.exp (shifted x)) (constant S_ .f32 0x00000000#32) reducesTo_S4096x50_S4096_d1 h_S_))) (ix2 b o) = _
  rw [broadcastInDim_apply ![0, 1] bcast_S4096x1_S4096x50_0_1 _ (ix2 b o) (ix2 b (0 : Fin 1)) (by
      intro a
      match a with
      | ⟨0, _⟩ => rfl
      | ⟨1, _⟩ => rfl)]
  show shifted x (ix2 b o) - Ideal.log (broadcastInDim S4096x1 ![0] bcast_S4096_S4096x1_0
      (Host.reduceAdd (Host.exp (shifted x)) (constant S_ .f32 0x00000000#32) reducesTo_S4096x50_S4096_d1 h_S_) (ix2 b (0 : Fin 1))) = _
  rw [broadcastInDim_apply ![0] bcast_S4096_S4096x1_0 _ (ix2 b (0 : Fin 1)) (ix1 b) (by
      intro a
      match a with
      | ⟨0, _⟩ => rfl)]
  show shifted x (ix2 b o) - Ideal.log (Ideal.hostReduceAdd reducesTo_S4096x50_S4096_d1 (Host.exp (shifted x))
      (Ideal.ofBits .f32 0x00000000#32) (ix1 b)) = _
  rw [Ideal.hostReduceAdd_single _ hR, Ideal.ofBits_zero_f32, zero_add, shifted_apply]
  unfold lsmRow
  congr 2
  refine Finset.sum_congr rfl fun o' _ => ?_
  have hl : hR.lift (ix1 b) o' = ix2 b o' := by
    funext a; refine Fin.ext ?_
    match a with
    | ⟨0, _⟩ => rfl
    | ⟨1, _⟩ => rfl
  rw [hl]
  exact congrArg Ideal.exp (shifted_apply x b o')

/-! ## The whole reference at an index -/

/-- The reference's result at `(b, o)`: the head on the mean of bag `b`. -/
theorem out_apply (idx : IVec S4096x50 32) (hr : ∀ i, (idx i).toNat ≤ 999999) (emb : FVec Ideal S1000000x64 .f32)
    (W1 : FVec Ideal S64x256 .f32) (b1 : FVec Ideal S256 .f32) (W2 : FVec Ideal S256x50 .f32) (b2 : FVec Ideal S50 .f32)
    (b : Fin 4096) (o : Fin 50) :
    out idx emb W1 b1 W2 b2 (ix2 b o)
      = headRow (fun c => (∑ j : Fin 50, emb (ix2 ⟨(idx (ix2 b j)).toNat, by have := hr (ix2 b j); omega⟩ c)) * ((1 / 50 : ℝ) : EReal))
          W1 (fun h => b1 (ix1 h)) W2 (fun o => b2 (ix1 o)) o := by
  unfold out headRow
  rw [logSoftmax_apply]
  congr 1
  funext o'
  rw [logits_apply]
  congr 1
  funext h
  rw [hidden_apply]
  congr 1
  funext c
  exact mean_apply idx hr emb b c

end Cert.Proof.Ref

end
-- ==== Proof.Bridge.lean ====
/-
  The kernel's result function is the reference's, at the ideal values.

  The kernel sums a bag's fifty rows left to right from zero, reading them off the relaid table; on the extended
  reals that is the sum over `Fin 50` of the table's rows, which are the embedding rows where the relaid table holds
  the embeddings.  Its head treats the 4096 sums in blocks of 512 rows, and on each row computes what the
  reference's head computes: the scaling by the constant `1 / 50` is the reference's division by fifty, a matrix
  product accumulated into a zero splat is the plain product, a vector reduction from the neutral element is the
  host's reduction from that initial value, and the maximum against minus infinity is the identity.  Both sides
  are read, row by row, as the same function `Ref.headRow` of the bag's mean.
-/
import proofs.«203835_g19404662243951_cont_8to1_399_35_alg».proof.Proof.Spec
import proofs.«203835_g19404662243951_cont_8to1_399_35_alg».proof.Proof.TileMath
import proofs.«203835_g19404662243951_cont_8to1_399_35_alg».proof.Proof.FfnnSpec
import proofs.«203835_g19404662243951_cont_8to1_399_35_alg».proof.Proof.RefRead

noncomputable section

namespace Cert.Proof.Bridge

open Idealize.ShloMosaic Idealize.ShloMosaic.ValueIdx Cert.Proof
open scoped BigOperators

/-! ## The bag sums on the extended reals -/

/-- The sum of the first `n` rows of a bag, left to right from zero, is their sum. -/
theorem bagPartial_eq_sum (flat : IVec Spec.SFlat 32) (tab : FVec Ideal Spec.STab .f32) (b c : Nat) :
    ∀ n : Nat, Spec.bagPartial flat tab b c n = ∑ j ∈ Finset.range n, Spec.bagTerm flat tab b c j
  | 0 => by
    show Ideal.ofBits .f32 0x00000000#32 = _
    rw [Ideal.ofBits_zero_f32, Finset.sum_range_zero]
  | n + 1 => by
    show Spec.bagPartial flat tab b c n + Spec.bagTerm flat tab b c n = _
    rw [bagPartial_eq_sum flat tab b c n, Finset.sum_range_succ]

/-- Where the relaid table holds the embeddings and every index is at most 999999, bag `b`'s sum at column `c` is
    the sum over its fifty positions of the embedding rows its indices name. -/
theorem bagSums_apply (idx : IVec Spec.SIdx 32) (hr : ∀ i, (idx i).toNat ≤ 999999) (emb : FVec Ideal Spec.SEmb .f32)
    (tab : FVec Ideal Spec.STab .f32) (ht : Spec.TableOK emb tab) (b : Fin 4096) (c : Fin 64) :
    Spec.bagSums (Spec.flatOf idx) tab (ix2 b c)
      = ∑ j : Fin 50, emb (ix2 ⟨(idx (ix2 b j)).toNat, by have := hr (ix2 b j); omega⟩ c) := by
  show Spec.bagPartial (Spec.flatOf idx) tab b.val c.val 50 = _
  rw [bagPartial_eq_sum, Finset.sum_range]
  refine Finset.sum_congr rfl fun j _ => ?_
  unfold Spec.bagTerm
  rw [TileMath.flatAt_flatOf idx b.val j.val b.isLt j.isLt]
  exact TileMath.tabAt_trow_tcol ht _ (Nat.lt_of_le_of_lt (hr (ix2 b j)) (by decide)) c.val c.isLt

/-! ## The kernel's head, stage by stage -/

open Cert.Proof.Ffnn in
/-- The hidden block. -/
def kHid (k : Ideal .f32) (x : FVec Ideal SX .f32) (w1 : FVec Ideal SW1 .f32) (b1 : FVec Ideal SB1 .f32) : FVec Ideal SH .f32 :=
  maximumf
    (addf (matmul dot1 none (mulf (shapeCast SX x casts_SX) (broadcast SX k)) w1 (constant SH .f32 0x00000000#32))
      (broadcastTo SH (shapeCast SB1 b1 casts_SB1) bcast_SB1_SH))
    (broadcast SH (Scalar.ofBits .f32 0x00000000#32))

open Cert.Proof.Ffnn in
/-- The block of logits. -/
def kLogits (h : FVec Ideal SH .f32) (w2 : FVec Ideal SW2 .f32) (b2 : FVec Ideal SB2 .f32) : FVec Ideal SO .f32 :=
  addf (matmul dot2 none h w2 (constant SO .f32 0x00000000#32)) (broadcastTo SO (shapeCast SB2 b2 casts_SB2) bcast_SB2_SO)

open Cert.Proof.Ffnn in
/-- A block's rows' maxima. -/
def kMax (l : FVec Ideal SO .f32) : FVec Ideal SR .f32 :=
  multiReduction .maximumf [1] SR l 0xFF800000#32 reduces_SO_SR (.inl rfl) rfl

open Cert.Proof.Ffnn in
/-- A block less its rows' maxima. -/
def kShift (l : FVec Ideal SO .f32) : FVec Ideal SO .f32 :=
  subf l (broadcastTo SO (shapeCast SR1 (kMax l) casts_SR_SR1) bcast_SR1_SO)

open Cert.Proof.Ffnn in
/-- The logarithm of the softmax of a block's rows. -/
def kLsm (l : FVec Ideal SO .f32) : FVec Ideal SO .f32 :=
  subf (kShift l)
    (broadcastTo SO (log (shapeCast SR1 (multiReduction .add [1] SR (exp (kShift l)) 0x00000000#32 reduces_SO_SR (.inl rfl) rfl)
      casts_SR_SR1)) bcast_SR1_SO)

/-- The head on a block is those stages composed. -/
theorem block_eq (k : Ideal .f32) (x : FVec Ideal Ffnn.SX .f32) (w1 : FVec Ideal Ffnn.SW1 .f32) (b1 : FVec Ideal Ffnn.SB1 .f32)
    (w2 : FVec Ideal Ffnn.SW2 .f32) (b2 : FVec Ideal Ffnn.SB2 .f32) :
    Ffnn.block k x w1 b1 w2 b2 = kLsm (kLogits (kHid k x w1 b1) w2 b2) := rfl

/-- A one-row matrix laid along the rows of a block, read at `(r, t)`, is the row at `(0, t)`. -/
theorem broadcastTo_oneRow_apply {α : Type} {m n : Nat} (hb : (⟨2, ![1, n]⟩ : Shape).Broadcasts ⟨2, ![m, n]⟩)
    (y : (⟨2, ![1, n]⟩ : Shape).Idx → α) (r : Fin m) (t : Fin n) :
    broadcastTo ⟨2, ![m, n]⟩ y hb (ix2 r t) = y (ix2 (0 : Fin 1) t) := by
  refine broadcastTo_apply y hb (ix2 r t) (ix2 (0 : Fin 1) t) ?_
  intro a
  match a with
  | ⟨0, _⟩ => rfl
  | ⟨1, _⟩ =>
    show t.val = if n = 1 then 0 else t.val
    split
    · have := t.isLt; omega
    · rfl

/-- A one-column matrix laid along the columns of a block, read at `(r, t)`, is the column at `(r, 0)`. -/
theorem broadcastTo_oneCol_apply {α : Type} {m n : Nat} (hb : (⟨2, ![m, 1]⟩ : Shape).Broadcasts ⟨2, ![m, n]⟩)
    (y : (⟨2, ![m, 1]⟩ : Shape).Idx → α) (r : Fin m) (t : Fin n) :
    broadcastTo ⟨2, ![m, n]⟩ y hb (ix2 r t) = y (ix2 r (0 : Fin 1)) := by
  refine broadcastTo_apply y hb (ix2 r t) (ix2 r (0 : Fin 1)) ?_
  intro a
  match a with
  | ⟨0, _⟩ =>
    show r.val = if m = 1 then 0 else r.val
    split
    · have := r.isLt; omega
    · rfl
  | ⟨1, _⟩ => rfl

/-- A vector recast as a one-row matrix, read at `(0, t)`, is the vector at `t`: the reading the bridge asks of the
    two bias rows. -/
theorem shapeCast_row_apply {α : Type} {n : Nat} (hc : (⟨1, ![n]⟩ : Shape).ShapeCasts ⟨2, ![1, n]⟩)
    (y : (⟨1, ![n]⟩ : Shape).Idx → α) (t : Fin n) :
    shapeCast ⟨2, ![1, n]⟩ y hc (ix2 (0 : Fin 1) t) = y (ix1 t) := by
  refine shapeCast_apply y hc (ix2 (0 : Fin 1) t) (ix1 t) ?_
  rw [Shape.rowMajor_val_two, Shape.rowMajor_val_one]
  show t.val = 0 * n + t.val
  omega

/-- A vector recast as a one-column matrix, read at `(r, 0)`, is the vector at `r`. -/
theorem shapeCast_col_apply {α : Type} {m : Nat} (hc : (⟨1, ![m]⟩ : Shape).ShapeCasts ⟨2, ![m, 1]⟩)
    (y : (⟨1, ![m]⟩ : Shape).Idx → α) (r : Fin m) :
    shapeCast ⟨2, ![m, 1]⟩ y hc (ix2 r (0 : Fin 1)) = y (ix1 r) := by
  refine shapeCast_apply y hc (ix2 r (0 : Fin 1)) (ix1 r) ?_
  rw [Shape.rowMajor_val_two, Shape.rowMajor_val_one]
  show r.val = r.val * 1 + 0
  omega

open Cert.Proof.Ffnn in
/-- The hidden block at `(r, h)`: the reference's hidden row on row `r` scaled by `k`. -/
theorem kHid_apply (k : Ideal .f32) (x : FVec Ideal SX .f32) (w1 : FVec Ideal SW1 .f32) (b1 : FVec Ideal SB1 .f32)
    (r : Fin 512) (h : Fin 256) :
    kHid k x w1 b1 (ix2 r h) = Ref.hidRow (fun c => x (ix2 r c) * k) w1 (fun h => b1 (ix2 (0 : Fin 1) h)) h := by
  have hd : dot1 = DotDims.plain 512 64 256 := rfl
  unfold kHid
  rw [shapeCast_self, shapeCast_self, matmul_zero_eq_dotGeneral]
  show max (Host.dotGeneral dot1 none (mulf x (broadcast SX k)) w1 (ix2 r h) + broadcastTo SH b1 bcast_SB1_SH (ix2 r h))
      (Ideal.ofBits .f32 0x00000000#32) = _
  rw [hd, StackMember.dotGeneral_plain_apply, Ideal.ofBits_zero_f32, broadcastTo_oneRow_apply]
  rfl

open Cert.Proof.Ffnn in
/-- The logits block at `(r, o)`. -/
theorem kLogits_apply (hdn : FVec Ideal SH .f32) (w2 : FVec Ideal SW2 .f32) (b2 : FVec Ideal SB2 .f32) (r : Fin 512) (o : Fin 50) :
    kLogits hdn w2 b2 (ix2 r o) = Ref.logitRow (fun h => hdn (ix2 r h)) w2 (fun o => b2 (ix2 (0 : Fin 1) o)) o := by
  have hd : dot2 = DotDims.plain 512 256 50 := rfl
  unfold kLogits
  rw [shapeCast_self, matmul_zero_eq_dotGeneral]
  show Host.dotGeneral dot2 none hdn w2 (ix2 r o) + broadcastTo SO b2 bcast_SB2_SO (ix2 r o) = _
  rw [hd, StackMember.dotGeneral_plain_apply, broadcastTo_oneRow_apply]
  rfl

open Cert.Proof.Ffnn in
/-- A row's maximum. -/
theorem kMax_apply (l : FVec Ideal SO .f32) (r : Fin 512) : kMax l (ix1 r) = Ref.maxRow (fun o => l (ix2 r o)) := by
  unfold kMax
  refine (Ideal.multiReduction_maximumf_single l 0xFF800000#32 reduces_SO_SR (.inl rfl) rfl (ix1 r)).trans ?_
  show (Finset.univ : Finset (Fin 50)).fold max (Ideal.ofBits .f32 0xFF800000#32) (l ∘ reduces_SO_SR.lift (ix1 r)) = _
  rw [Ref.ofBits_neg_inf]
  have hl : l ∘ reduces_SO_SR.lift (ix1 r) = fun o => l (ix2 r o) := by
    funext o
    show l (reduces_SO_SR.lift (ix1 r) o) = l (ix2 r o)
    congr 1
    funext a; refine Fin.ext ?_
    match a with
    | ⟨0, _⟩ => rfl
    | ⟨1, _⟩ => rfl
  rw [hl]
  rfl

open Cert.Proof.Ffnn in
/-- A row less its maximum. -/
theorem kShift_apply (l : FVec Ideal SO .f32) (r : Fin 512) (o : Fin 50) :
    kShift l (ix2 r o) = l (ix2 r o) - Ref.maxRow (fun o => l (ix2 r o)) := by
  show l (ix2 r o) - broadcastTo SO (shapeCast SR1 (kMax l) casts_SR_SR1) bcast_SR1_SO (ix2 r o) = _
  rw [broadcastTo_oneCol_apply, shapeCast_col_apply, kMax_apply]

open Cert.Proof.Ffnn in
/-- The logarithm of the softmax at `(r, o)`. -/
theorem kLsm_apply (l : FVec Ideal SO .f32) (r : Fin 512) (o : Fin 50) :
    kLsm l (ix2 r o) = Ref.lsmRow (fun o => l (ix2 r o)) o := by
  show kShift l (ix2 r o) - broadcastTo SO (log (shapeCast SR1
      (multiReduction .add [1] SR (exp (kShift l)) 0x00000000#32 reduces_SO_SR (.inl rfl) rfl) casts_SR_SR1)) bcast_SR1_SO (ix2 r o) = _
  rw [broadcastTo_oneCol_apply]
  show kShift l (ix2 r o) - Ideal.log (shapeCast SR1
      (multiReduction .add [1] SR (exp (kShift l)) 0x00000000#32 reduces_SO_SR (.inl rfl) rfl) casts_SR_SR1 (ix2 r (0 : Fin 1))) = _
  have hs : multiReduction .add [1] SR (exp (kShift l)) 0x00000000#32 reduces_SO_SR (.inl rfl) rfl (ix1 r)
      = ∑ q : Fin 50, exp (kShift l) (reduces_SO_SR.lift (ix1 r) q) :=
    Ideal.multiReduction_add_single (exp (kShift l)) 0x00000000#32 reduces_SO_SR (.inl rfl) rfl (ix1 r)
  rw [shapeCast_col_apply, hs, kShift_apply]
  unfold Ref.lsmRow
  refine congrArg (fun z : EReal => (l (ix2 r o) - Ref.maxRow fun o => l (ix2 r o)) - Ideal.log z) ?_
  refine Finset.sum_congr rfl fun o' _ => ?_
  have hl : reduces_SO_SR.lift (ix1 r) o' = ix2 r o' := by
    funext a; refine Fin.ext ?_
    match a with
    | ⟨0, _⟩ => rfl
    | ⟨1, _⟩ => rfl
  rw [hl]
  exact congrArg Ideal.exp (kShift_apply l r o')

/-- The head on a block at `(r, o)`: the reference's head on row `r` scaled by `k`. -/
theorem block_apply (k : Ideal .f32) (x : FVec Ideal Ffnn.SX .f32) (w1 : FVec Ideal Ffnn.SW1 .f32) (b1 : FVec Ideal Ffnn.SB1 .f32)
    (w2 : FVec Ideal Ffnn.SW2 .f32) (b2 : FVec Ideal Ffnn.SB2 .f32) (r : Fin 512) (o : Fin 50) :
    Ffnn.block k x w1 b1 w2 b2 (ix2 r o)
      = Ref.headRow (fun c => x (ix2 r c) * k) w1 (fun h => b1 (ix2 (0 : Fin 1) h)) w2 (fun o => b2 (ix2 (0 : Fin 1) o)) o := by
  rw [block_eq, kLsm_apply]
  unfold Ref.headRow
  refine congrArg (fun l : Fin 50 → EReal => Ref.lsmRow l o) ?_
  funext o'
  rw [kLogits_apply]
  refine congrArg (fun hd : Fin 256 → EReal => Ref.logitRow hd w2 (fun o => b2 (ix2 (0 : Fin 1) o)) o') ?_
  funext h
  exact kHid_apply k x w1 b1 r h

/-- Row `r` of block `t` of the sums is row `512 t + r`. -/
theorem rowsOf_apply (s : FVec Ideal Ffnn.SSum .f32) (t r : Nat) (hr : r < 512) (c : Fin 64) (h : 512 * t + r < 4096) :
    Ffnn.rowsOf s t (ix2 (⟨r, hr⟩ : Fin 512) c) = s (ix2 ⟨512 * t + r, h⟩ c) := by
  unfold Ffnn.rowsOf
  exact dif_pos h

/-! ## The bridge -/

/-- Where every index is at most 999999 and the relaid table holds the embeddings, the kernel's head on the bag
    sums, scaled by the real `1 / 50`, is the reference function of the six arguments. -/
theorem bridge (k : Ideal .f32) (hk : k = ((1 / 50 : ℝ) : EReal)) (idx : IVec Spec.SIdx 32) (emb : FVec Ideal Spec.SEmb .f32)
    (tab : FVec Ideal Spec.STab .f32) (W1 : FVec Ideal ⟨2, ![64, 256]⟩ .f32) (b1 : FVec Ideal ⟨1, ![256]⟩ .f32)
    (b1r : FVec Ideal ⟨2, ![1, 256]⟩ .f32) (W2 : FVec Ideal ⟨2, ![256, 50]⟩ .f32) (b2 : FVec Ideal ⟨1, ![50]⟩ .f32)
    (b2r : FVec Ideal ⟨2, ![1, 50]⟩ .f32) (hr : ∀ i, (idx i).toNat ≤ 999999) (ht : Spec.TableOK emb tab)
    (hb1 : ∀ j, b1r (ix2 (0 : Fin 1) j) = b1 (ix1 j)) (hb2 : ∀ j, b2r (ix2 (0 : Fin 1) j) = b2 (ix1 j)) :
    Ffnn.out k (Spec.bagSums (Spec.flatOf idx) tab) W1 b1r W2 b2r = Ref.out idx emb W1 b1 W2 b2 := by
  funext i
  obtain ⟨b, o, rfl⟩ : ∃ (b : Fin 4096) (o : Fin 50), i = ix2 b o := ⟨i 0, i 1, eq_ix2 i⟩
  rw [Ref.out_apply idx hr emb W1 b1 W2 b2 b o]
  show Ffnn.block k (Ffnn.rowsOf (Spec.bagSums (Spec.flatOf idx) tab) (b.val / 512)) W1 b1r W2 b2r
      (ix2 ⟨b.val % 512, Nat.mod_lt _ (by decide)⟩ o) = _
  rw [block_apply]
  have hx : (fun c : Fin 64 => Ffnn.rowsOf (Spec.bagSums (Spec.flatOf idx) tab) (b.val / 512)
        (ix2 (⟨b.val % 512, Nat.mod_lt _ (by decide)⟩ : Fin 512) c) * k)
      = fun c : Fin 64 => (∑ j : Fin 50, emb (ix2 ⟨(idx (ix2 b j)).toNat, by have := hr (ix2 b j); omega⟩ c)) * ((1 / 50 : ℝ) : EReal) := by
    funext c
    have hlt : 512 * (b.val / 512) + b.val % 512 < 4096 := by have := b.isLt; omega
    have hb : (⟨512 * (b.val / 512) + b.val % 512, hlt⟩ : Fin 4096) = b := Fin.ext (by show 512 * (b.val / 512) + b.val % 512 = b.val; omega)
    rw [rowsOf_apply _ _ _ _ _ hlt, hb, bagSums_apply idx hr emb tab ht, hk]
  have h1 : (fun h : Fin 256 => b1r (ix2 (0 : Fin 1) h)) = fun h => b1 (ix1 h) := funext hb1
  have h2 : (fun o : Fin 50 => b2r (ix2 (0 : Fin 1) o)) = fun o => b2 (ix1 o) := funext hb2
  rw [hx, h1, h2]

end Cert.Proof.Bridge

end
-- ==== Proof.PreDecode.lean ====
/-
  The precondition read back.  The printed predicate is the conjunction of six statements, each a reduction by
  "and" of an array of bits to one bit; that the whole is one says each of the six is one, and the last of them
  says, of every word of the index array, that it is at least zero and at most 999999 read as a signed integer.
  Since 999999 is below 2³¹, that is the one unsigned bound `toNat ≤ 999999`.
-/
import proofs.«203835_g19404662243951_cont_8to1_399_35_alg».proof.Pre_input_domain
import Idealize.ShloMosaic.Lib.ReduceAll
import Idealize.ShloMosaic.Lib.ValueIdx

namespace Cert.Proof.PreDecode

open Cert.Pre_input_domain Cert.Pre_input_domain.Facts Idealize.ShloMosaic Idealize.ShloMosaic.ValueIdx

/-- The scalar shape has one index. -/
instance subsingleton_scalarIdx : Subsingleton S_.Idx := ⟨fun _ _ => funext fun d => d.elim0⟩

/-- A word that is at least zero and at most 999999, read signed, is at most 999999 read unsigned. -/
theorem toNat_le_of_cmpi {w : BitVec 32} (hge : IntOp.cmpi .sge w 0#32 = 1#1) (hle : IntOp.cmpi .sle w 999999#32 = 1#1) :
    w.toNat ≤ 999999 := by
  have h0 : (0#32 : BitVec 32).toInt = 0 := by decide
  have h9 : (999999#32 : BitVec 32).toInt = 999999 := by decide
  have hb : ∀ b : Bool, BitVec.ofBool b = 1#1 ↔ b = true := fun b => by cases b <;> decide
  simp only [IntOp.cmpi, hb, BitVec.sle, decide_eq_true_eq, h0, h9] at hge hle
  have hc := BitVec.toInt_eq_toNat_cond w
  split at hc <;> omega

/-- Such a word reads the same signed and unsigned, and its top bit is clear. -/
theorem toInt_eq_toNat_of_le {w : BitVec 32} (h : w.toNat ≤ 999999) : w.toInt = w.toNat := by
  have hc := BitVec.toInt_eq_toNat_cond w
  split at hc <;> omega

theorem msb_eq_false_of_le {w : BitVec 32} (h : w.toNat ≤ 999999) : w.msb = false :=
  BitVec.msb_eq_false_iff_two_mul_lt.mpr (by omega)

variable {F : FTy → Type} [FloatOps F] [Cert.Pre_input_domain.Facts]

/-- Where the printed predicate of the six arguments is all ones, every word of the index array is at most 999999
    read unsigned (hence non-negative and at most 999999 read signed). -/
theorem idx_range (a0 : IVec S4096x50 32) (a1 : FVec F S1000000x64 .f32) (a2 : FVec F S64x256 .f32) (a3 : FVec F S256 .f32)
    (a4 : FVec F S256x50 .f32) (a5 : FVec F S50 .f32) (h : fn (F := F) a0 a1 a2 a3 a4 a5 = fun _ => 1#1) :
    ∀ i, (a0 i).toNat ≤ 999999 := by
  intro i
  have h0 := congrFun h ix0
  simp only [fn, fn_part1] at h0
  have h1 := (IntOp.andi_eq_one.1 h0).2
  have h2 := IntOp.andi_eq_one.1 (Host.reduce_andi_all _ _ _ _ ix0 h1 i)
  exact toNat_le_of_cmpi h2.1 h2.2

end Cert.Proof.PreDecode
-- ==== Proof.ClaimsRef.lean ====
/-
  The claim's reference side, and the algebraic conjunct assembled from the kernel's run.

  The reference's frame is its run with the value dropped.  The idealization's one rewrite, the constant
  `0.02` printed as the named `1 / 50`, is stated by the rule's own proposition.  The algebraic conjunct takes the
  kernel's run in the form the kernel's proof gives it — the result array at the head of the bag sums read off a
  relaid table that holds the embeddings, the arguments unchanged — and the reference's run: the common result is
  the reference function of the kernel's arguments, the kernel's side by the bridge under the index range the
  precondition states, the reference's side by its run from memories that agree on the arguments.
-/
import proofs.«203835_g19404662243951_cont_8to1_399_35_alg».proof.Defs
import proofs.«203835_g19404662243951_cont_8to1_399_35_alg».proof.Proof.Gen.Pre_input_domain
import proofs.«203835_g19404662243951_cont_8to1_399_35_alg».proof.Proof.RefRun
import proofs.«203835_g19404662243951_cont_8to1_399_35_alg».proof.Proof.Bridge
import proofs.«203835_g19404662243951_cont_8to1_399_35_alg».proof.Proof.PreDecode

noncomputable section

namespace Cert.Proof.ClaimsRef

open Idealize.ShloMosaic Idealize.SL.Sem Idealize.ShloMosaic.ValueIdx Cert.Proof

/-- The reference runs and leaves its arguments unchanged. -/
theorem frame_ri : Cert.frame_ReferenceIdeal := fun m g _ =>
  (θ_run _ _ _).mono (fun _ h c => (h c).2) (Ref.run (F := Ideal) m g)

/-- The one rewrite of the idealization: the constant named `inv_50` is the real `1 / 50`. -/
theorem preserves : Cert.preserves_Kernel_KernelIdeal :=
  IdealRules.named_const.statement Cert.KernelIdeal.κ "inv_50" .f32 0x3CA3D70A#32 ((1 / 50 : ℝ) : EReal) rfl

section Algebraic

variable [Cert.KernelIdeal.Facts]

/-- The kernel's argument buffers on device `c`, at their tensor types. -/
abbrev kIdx (m : (ℓ : Loc Cert.KernelIdeal.nD Cert.KernelIdeal.τ Cert.KernelIdeal.sig) → Buf (Elt Ideal) ℓ)
    (c : Dev Cert.KernelIdeal.nD) : IVec Spec.SIdx 32 :=
  m ((c.tc : Thread Cert.KernelIdeal.nD Cert.KernelIdeal.τ).loc Cert.KernelIdeal.main_arg0)
abbrev kEmb (m : (ℓ : Loc Cert.KernelIdeal.nD Cert.KernelIdeal.τ Cert.KernelIdeal.sig) → Buf (Elt Ideal) ℓ)
    (c : Dev Cert.KernelIdeal.nD) : FVec Ideal Spec.SEmb .f32 :=
  m ((c.tc : Thread Cert.KernelIdeal.nD Cert.KernelIdeal.τ).loc Cert.KernelIdeal.main_arg1)
abbrev kW1 (m : (ℓ : Loc Cert.KernelIdeal.nD Cert.KernelIdeal.τ Cert.KernelIdeal.sig) → Buf (Elt Ideal) ℓ)
    (c : Dev Cert.KernelIdeal.nD) : FVec Ideal ⟨2, ![64, 256]⟩ .f32 :=
  m ((c.tc : Thread Cert.KernelIdeal.nD Cert.KernelIdeal.τ).loc Cert.KernelIdeal.main_arg2)
abbrev kB1 (m : (ℓ : Loc Cert.KernelIdeal.nD Cert.KernelIdeal.τ Cert.KernelIdeal.sig) → Buf (Elt Ideal) ℓ)
    (c : Dev Cert.KernelIdeal.nD) : FVec Ideal ⟨1, ![256]⟩ .f32 :=
  m ((c.tc : Thread Cert.KernelIdeal.nD Cert.KernelIdeal.τ).loc Cert.KernelIdeal.main_arg3)
abbrev kW2 (m : (ℓ : Loc Cert.KernelIdeal.nD Cert.KernelIdeal.τ Cert.KernelIdeal.sig) → Buf (Elt Ideal) ℓ)
    (c : Dev Cert.KernelIdeal.nD) : FVec Ideal ⟨2, ![256, 50]⟩ .f32 :=
  m ((c.tc : Thread Cert.KernelIdeal.nD Cert.KernelIdeal.τ).loc Cert.KernelIdeal.main_arg4)
abbrev kB2 (m : (ℓ : Loc Cert.KernelIdeal.nD Cert.KernelIdeal.τ Cert.KernelIdeal.sig) → Buf (Elt Ideal) ℓ)
    (c : Dev Cert.KernelIdeal.nD) : FVec Ideal ⟨1, ![50]⟩ .f32 :=
  m ((c.tc : Thread Cert.KernelIdeal.nD Cert.KernelIdeal.τ).loc Cert.KernelIdeal.main_arg5)

/-- The scale the kernel's head multiplies by: the constant named `inv_50`, the real `1 / 50`. -/
abbrev k50 : Ideal .f32 := Named.named (F := Ideal) Cert.KernelIdeal.κ "inv_50" 0x3CA3D70A#32

theorem k50_eq : k50 = ((1 / 50 : ℝ) : EReal) :=
  IdealRules.named_const.ideal_named_scalar Cert.KernelIdeal.κ "inv_50" _ _ rfl

/-- What the kernel's run is asked to end with, on device `c`: the result array at the head of the bag sums read off
    some relaid table that holds the embeddings, the two bias vectors as one-row matrices `b1r`, `b2r`; and the six
    arguments unchanged. -/
def KernelPost (m : (ℓ : Loc Cert.KernelIdeal.nD Cert.KernelIdeal.τ Cert.KernelIdeal.sig) → Buf (Elt Ideal) ℓ)
    (mem : (ℓ : Loc Cert.KernelIdeal.nD Cert.KernelIdeal.τ Cert.KernelIdeal.sig) → Buf (Elt Ideal) ℓ)
    (c : Dev Cert.KernelIdeal.nD) : Prop :=
  (∃ (tab : FVec Ideal Spec.STab .f32) (b1r : FVec Ideal ⟨2, ![1, 256]⟩ .f32) (b2r : FVec Ideal ⟨2, ![1, 50]⟩ .f32),
      Spec.TableOK (kEmb m c) tab
      ∧ (∀ j, b1r (ix2 (0 : Fin 1) j) = kB1 m c (ix1 j))
      ∧ (∀ j, b2r (ix2 (0 : Fin 1) j) = kB2 m c (ix1 j))
      ∧ mem ((c.tc : Thread Cert.KernelIdeal.nD Cert.KernelIdeal.τ).loc Cert.KernelIdeal.main_v8)
          = Ffnn.out k50 (Spec.bagSums (Spec.flatOf (kIdx m c)) tab) (kW1 m c) b1r (kW2 m c) b2r)
  ∧ mem ((c.tc : Thread Cert.KernelIdeal.nD Cert.KernelIdeal.τ).loc Cert.KernelIdeal.main_arg0) = m ((c.tc : Thread Cert.KernelIdeal.nD Cert.KernelIdeal.τ).loc Cert.KernelIdeal.main_arg0)
  ∧ mem ((c.tc : Thread Cert.KernelIdeal.nD Cert.KernelIdeal.τ).loc Cert.KernelIdeal.main_arg1) = m ((c.tc : Thread Cert.KernelIdeal.nD Cert.KernelIdeal.τ).loc Cert.KernelIdeal.main_arg1)
  ∧ mem ((c.tc : Thread Cert.KernelIdeal.nD Cert.KernelIdeal.τ).loc Cert.KernelIdeal.main_arg2) = m ((c.tc : Thread Cert.KernelIdeal.nD Cert.KernelIdeal.τ).loc Cert.KernelIdeal.main_arg2)
  ∧ mem ((c.tc : Thread Cert.KernelIdeal.nD Cert.KernelIdeal.τ).loc Cert.KernelIdeal.main_arg3) = m ((c.tc : Thread Cert.KernelIdeal.nD Cert.KernelIdeal.τ).loc Cert.KernelIdeal.main_arg3)
  ∧ mem ((c.tc : Thread Cert.KernelIdeal.nD Cert.KernelIdeal.τ).loc Cert.KernelIdeal.main_arg4) = m ((c.tc : Thread Cert.KernelIdeal.nD Cert.KernelIdeal.τ).loc Cert.KernelIdeal.main_arg4)
  ∧ mem ((c.tc : Thread Cert.KernelIdeal.nD Cert.KernelIdeal.τ).loc Cert.KernelIdeal.main_arg5) = m ((c.tc : Thread Cert.KernelIdeal.nD Cert.KernelIdeal.τ).loc Cert.KernelIdeal.main_arg5)

/-- The reference function of the kernel's arguments on device `c`: the common result. -/
abbrev result (m : (ℓ : Loc Cert.KernelIdeal.nD Cert.KernelIdeal.τ Cert.KernelIdeal.sig) → Buf (Elt Ideal) ℓ)
    (c : Dev Cert.KernelIdeal.nD) : FVec Ideal ⟨2, ![4096, 50]⟩ .f32 :=
  Ref.out (kIdx m c) (kEmb m c) (kW1 m c) (kB1 m c) (kW2 m c) (kB2 m c)

/-- Under the precondition, a memory that satisfies the kernel's post holds the reference function of the arguments
    in the result array. -/
theorem result_of_post (m mem : (ℓ : Loc Cert.KernelIdeal.nD Cert.KernelIdeal.τ Cert.KernelIdeal.sig) → Buf (Elt Ideal) ℓ)
    [Cert.Pre_input_domain.Facts] (hpre : Cert.Pre_KernelIdeal m) (c : Dev Cert.KernelIdeal.nD) (h : KernelPost m mem c) :
    mem ((c.tc : Thread Cert.KernelIdeal.nD Cert.KernelIdeal.τ).loc Cert.KernelIdeal.main_v8) = result m c := by
  obtain ⟨⟨tab, b1r, b2r, ht, hb1, hb2, hv⟩, -⟩ := h
  refine hv.trans ?_
  exact Bridge.bridge k50 k50_eq (kIdx m c) (kEmb m c) tab (kW1 m c) (kB1 m c) b1r (kW2 m c) (kB2 m c) b2r
    (PreDecode.idx_range _ _ _ _ _ _ (hpre c)) ht hb1 hb2

/-- The algebraic conjunct, from a run of the kernel that ends at `KernelPost`. -/
theorem algebraic_of_run
    (hK : ∀ (m : (ℓ : Loc Cert.KernelIdeal.nD Cert.KernelIdeal.τ Cert.KernelIdeal.sig) → Buf (Elt Ideal) ℓ)
        (g : Dev Cert.KernelIdeal.nD → PrngReg), Cert.Pre_KernelIdeal m →
      θ_run (Cert.KernelIdeal.defs (F := Ideal)) (Cert.KernelIdeal.threads (F := Ideal)) ⟨m, fun _ => 0, g⟩
        (fun r => ∀ c : Dev Cert.KernelIdeal.nD, KernelPost m r.2.mem c)) :
    Cert.algebraic_KernelIdeal_ReferenceIdeal := by
  intro m g m' g' hpre hagree
  refine ⟨fun c => result m c, ?_, ?_⟩
  · refine (θ_run _ _ _).mono (fun _ h c => ⟨result_of_post m _ hpre c (h c), (h c).2⟩) (hK m g hpre)
  · refine (θ_run Cert.ReferenceIdeal.defs _ _).mono (fun _ h c => ⟨(h c).1.trans ?_, (h c).2⟩) (Ref.run (F := Ideal) m' g')
    rw [(hagree c).1, (hagree c).2.1, (hagree c).2.2.1, (hagree c).2.2.2.1, (hagree c).2.2.2.2.1, (hagree c).2.2.2.2.2]

/-- The kernel's frame, from the same run. -/
theorem frame_ki_of_run
    (hK : ∀ (m : (ℓ : Loc Cert.KernelIdeal.nD Cert.KernelIdeal.τ Cert.KernelIdeal.sig) → Buf (Elt Ideal) ℓ)
        (g : Dev Cert.KernelIdeal.nD → PrngReg), Cert.Pre_KernelIdeal m →
      θ_run (Cert.KernelIdeal.defs (F := Ideal)) (Cert.KernelIdeal.threads (F := Ideal)) ⟨m, fun _ => 0, g⟩
        (fun r => ∀ c : Dev Cert.KernelIdeal.nD, KernelPost m r.2.mem c)) :
    Cert.frame_KernelIdeal := fun m g hpre =>
  (θ_run _ _ _).mono (fun _ h c => (h c).2) (hK m g hpre)

end Algebraic

end Cert.Proof.ClaimsRef

end
-- ==== Proof.ClaimsBits.lean ====
/-
  The word-level kernel's frame from its run, and the index range in the form the tiles use it.

  The kernel's frame asks only that the six arguments end unchanged, so it is the kernel's run with exactly that
  post.  The flat padded index array holds the index array's words and zeros; where the precondition holds, every
  index word is at most 999999 read unsigned, and so is every word of the flat array.
-/
import proofs.«203835_g19404662243951_cont_8to1_399_35_alg».proof.Defs
import proofs.«203835_g19404662243951_cont_8to1_399_35_alg».proof.Proof.Gen.Pre_input_domain
import proofs.«203835_g19404662243951_cont_8to1_399_35_alg».proof.Proof.Spec
import proofs.«203835_g19404662243951_cont_8to1_399_35_alg».proof.Proof.PreDecode

noncomputable section

namespace Cert.Proof.ClaimsBits

open Idealize.ShloMosaic Idealize.SL.Sem Cert.Proof

/-! ## The flat index array's range -/

/-- Every word of the flat padded array is at most 999999 where every index word is: the pad words are zero. -/
theorem flatOf_range (idx : IVec Spec.SIdx 32) (h : ∀ i, (idx i).toNat ≤ 999999) (n : Spec.SFlat.Idx) :
    (Spec.flatOf idx n).toNat ≤ 999999 := by
  unfold Spec.flatOf
  split
  · exact h _
  · decide

/-- Under the word-level kernel's precondition, every word of the flat padded index array is at most 999999. -/
theorem flat_range_Kernel (m : (ℓ : Loc Cert.Kernel.nD Cert.Kernel.τ Cert.Kernel.sig) → Buf (Elt Bits) ℓ)
    (hpre : Cert.Pre_Kernel m) (d : Dev Cert.Kernel.nD) (n : Spec.SFlat.Idx) :
    (Spec.flatOf (m ((d.tc : Thread Cert.Kernel.nD Cert.Kernel.τ).loc Cert.Kernel.main_arg0)) n).toNat ≤ 999999 :=
  flatOf_range _ (PreDecode.idx_range (F := Bits) _ _ _ _ _ _ (hpre d)) n

/-- The same of the index array itself. -/
theorem idx_range_Kernel (m : (ℓ : Loc Cert.Kernel.nD Cert.Kernel.τ Cert.Kernel.sig) → Buf (Elt Bits) ℓ)
    (hpre : Cert.Pre_Kernel m) (d : Dev Cert.Kernel.nD) (i : Spec.SIdx.Idx) :
    ((m ((d.tc : Thread Cert.Kernel.nD Cert.Kernel.τ).loc Cert.Kernel.main_arg0) : IVec Spec.SIdx 32) i).toNat ≤ 999999 :=
  PreDecode.idx_range (F := Bits) _ _ _ _ _ _ (hpre d) i

/-- Under the idealized kernel's precondition, every word of the flat padded index array is at most 999999. -/
theorem flat_range_KernelIdeal (m : (ℓ : Loc Cert.KernelIdeal.nD Cert.KernelIdeal.τ Cert.KernelIdeal.sig) → Buf (Elt Ideal) ℓ)
    (hpre : Cert.Pre_KernelIdeal m) (d : Dev Cert.KernelIdeal.nD) (n : Spec.SFlat.Idx) :
    (Spec.flatOf (m ((d.tc : Thread Cert.KernelIdeal.nD Cert.KernelIdeal.τ).loc Cert.KernelIdeal.main_arg0)) n).toNat ≤ 999999 :=
  flatOf_range _ (PreDecode.idx_range (F := Ideal) _ _ _ _ _ _ (hpre d)) n

/-- The same of the index array itself. -/
theorem idx_range_KernelIdeal (m : (ℓ : Loc Cert.KernelIdeal.nD Cert.KernelIdeal.τ Cert.KernelIdeal.sig) → Buf (Elt Ideal) ℓ)
    (hpre : Cert.Pre_KernelIdeal m) (d : Dev Cert.KernelIdeal.nD) (i : Spec.SIdx.Idx) :
    ((m ((d.tc : Thread Cert.KernelIdeal.nD Cert.KernelIdeal.τ).loc Cert.KernelIdeal.main_arg0) : IVec Spec.SIdx 32) i).toNat ≤ 999999 :=
  PreDecode.idx_range (F := Ideal) _ _ _ _ _ _ (hpre d) i

/-! ## The word-level kernel's frame -/

/-- What the word-level kernel's run is asked to end with, on device `c`: the six arguments unchanged. -/
def ArgsKept (m mem : (ℓ : Loc Cert.Kernel.nD Cert.Kernel.τ Cert.Kernel.sig) → Buf (Elt Bits) ℓ) (c : Dev Cert.Kernel.nD) : Prop :=
  mem ((c.tc : Thread Cert.Kernel.nD Cert.Kernel.τ).loc Cert.Kernel.main_arg0) = m ((c.tc : Thread Cert.Kernel.nD Cert.Kernel.τ).loc Cert.Kernel.main_arg0)
  ∧ mem ((c.tc : Thread Cert.Kernel.nD Cert.Kernel.τ).loc Cert.Kernel.main_arg1) = m ((c.tc : Thread Cert.Kernel.nD Cert.Kernel.τ).loc Cert.Kernel.main_arg1)
  ∧ mem ((c.tc : Thread Cert.Kernel.nD Cert.Kernel.τ).loc Cert.Kernel.main_arg2) = m ((c.tc : Thread Cert.Kernel.nD Cert.Kernel.τ).loc Cert.Kernel.main_arg2)
  ∧ mem ((c.tc : Thread Cert.Kernel.nD Cert.Kernel.τ).loc Cert.Kernel.main_arg3) = m ((c.tc : Thread Cert.Kernel.nD Cert.Kernel.τ).loc Cert.Kernel.main_arg3)
  ∧ mem ((c.tc : Thread Cert.Kernel.nD Cert.Kernel.τ).loc Cert.Kernel.main_arg4) = m ((c.tc : Thread Cert.Kernel.nD Cert.Kernel.τ).loc Cert.Kernel.main_arg4)
  ∧ mem ((c.tc : Thread Cert.Kernel.nD Cert.Kernel.τ).loc Cert.Kernel.main_arg5) = m ((c.tc : Thread Cert.Kernel.nD Cert.Kernel.τ).loc Cert.Kernel.main_arg5)

/-- The word-level kernel's frame, from a run that ends with the six arguments unchanged. -/
theorem frame_k_of_run [Cert.Kernel.Facts]
    (hK : ∀ (m : (ℓ : Loc Cert.Kernel.nD Cert.Kernel.τ Cert.Kernel.sig) → Buf (Elt Bits) ℓ) (g : Dev Cert.Kernel.nD → PrngReg),
      Cert.Pre_Kernel m →
      θ_run (Cert.Kernel.defs (F := Bits)) (Cert.Kernel.threads (F := Bits)) ⟨m, fun _ => 0, g⟩
        (fun r => ∀ c : Dev Cert.Kernel.nD, ArgsKept m r.2.mem c)) :
    Cert.frame_Kernel := fun m g hpre =>
  (θ_run _ _ _).mono (fun _ h c => h c) (hK m g hpre)

end Cert.Proof.ClaimsBits

end
-- ==== Proof.Setup.lean ====
/-
  The program as the SparseCore launch theorem sees it: the kernel table `K` (one vector-subcore call on 2 x 16 tiles), the
  body table `D` of the two TensorCore pipelines and the SparseCore body, and the ghost algebra — the handshakes' rounds
  library, the pipelines' staging cells' rounds library, and the local transfers' counters side by side.
-/
import proofs.«203835_g19404662243951_cont_8to1_399_35_alg».proof.KernelIdeal
import proofs.«203835_g19404662243951_cont_8to1_399_35_alg».proof.Proof.Gen.KernelIdeal
import proofs.«203835_g19404662243951_cont_8to1_399_35_alg».proof.Proof.Gen.KernelIdeal.Launch
import proofs.«203835_g19404662243951_cont_8to1_399_35_alg».proof.Proof.Spec
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The pipelines' staging cells' rounds library: the left half of the right factor (the transfers' counters are found
    by instance in its right half). -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays the SparseCore call works on, as the TensorCore names them -/

/-- The flat padded index array, the relaid table, the bag sums. -/
abbrev iLoc (d : Dev nD) : Loc nD τ sig := (SparseCore.T d).loc main_v4
abbrev tLoc (d : Dev nD) : Loc nD τ sig := (SparseCore.T d).loc main_v2
abbrev oLoc (d : Dev nD) : Loc nD τ sig := (SparseCore.T d).loc main_v5

/-- The worker number of tile `i` of SparseCore `c`: the kernel's `s * 2 + c`. -/
def wid (c i : Nat) : Nat := i * 2 + c

end Cert.Proof.Bag

end
-- ==== Proof.TileDefs.lean ====
/-
  The arrays and scratches of one vector subcore's task as the kernel's body addresses them, the rows of the sums a
  task owns, and what a task is handed and hands back.

  Worker number `w = 2 s + c` (subcore `s` of SparseCore `c`) owns bags `[128 w, 128 w + 128)`: eight blocks of sixteen
  rows of the sums, block `k` being rows `[128 w + 16 k, +16)`, i.e. part `8 w + k` of the 256 equal row parts of the
  array. A task is handed a read share of the flat index array and of the relaid table and its eight blocks at whatever
  they hold; it hands back the shares and the blocks holding the bag sums.
-/
import proofs.«203835_g19404662243951_cont_8to1_399_35_alg».proof.Proof.Setup

noncomputable section

namespace Cert.Proof.Bag

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The kernel's operands and scratches, spelt as the body table passes them -/

abbrev iV : Memref sig .scVector .hbm S262144 .i32 := Memref.whole main_v4_scv
abbrev tV : Memref sig .scVector .hbm S507904x128 .f32 := Memref.whole main_v2_scv
abbrev oV : Memref sig .scVector .hbm S4096x64 .f32 := Memref.whole main_v5_scv
abbrev sIdx : Memref sig .scVector .vmem S2048 .i32 := Memref.whole cc1_scratch0
abbrev sTix : Memref sig .scVector .vmem S2048 .i32 := Memref.whole cc1_scratch1
abbrev sRv : Memref sig .scVector .vmem S2048 .i32 := Memref.whole cc1_scratch2
abbrev sRows : Memref sig .scVector .vmem S2x50x128 .f32 := Memref.whole cc1_scratch3
abbrev sWb : Memref sig .scVector .vmem S2x16x64 .f32 := Memref.whole cc1_scratch4

/-! ## The row blocks of the sums -/

theorem hdiv256 : 256 ∣ S4096x64.size 0 := ⟨16, rfl⟩
/-- Row part `n` of 256: rows `[16 n, 16 n + 16)`, all 64 columns. -/
abbrev blk (n : Fin 256) : Rect S4096x64 := Rect.part (s := S4096x64) (a₀ := 0) hdiv256 n
/-- Its elements, as a slice of the sums' array holds them. -/
abbrev blockSet (n : Fin 256) : Finset S4096x64.Idx := ((oV : Memref sig .scVector .hbm S4096x64 .f32).view.slice (blk n)).set
/-- Block `k` of worker `w`. -/
def blkNo (w : Fin 32) (k : Fin 8) : Fin 256 := ⟨8 * w.val + k.val, by have := w.isLt; have := k.isLt; omega⟩

/-- The worker number of tile `i` of SparseCore `c`. -/
def widF (c : Fin 2) (i : Fin 16) : Fin 32 := ⟨i.val * 2 + c.val, by have := c.isLt; have := i.isLt; omega⟩

/-! ## What a task is handed and hands back -/

variable [FloatOps F]

/-- Handed to worker `w`: a share `qi` of the flat index array at `fl`, a share `qt` of the relaid table (its contents
    satisfying `PK`), and the worker's eight row blocks of the sums at whatever they hold. -/
def goA (PK : FVec F Spec.STab .f32 → Prop) (fl : IVec Spec.SFlat 32) (qi qt : PosShare TreeShare) (d : Dev nD) (w : Fin 32) : sProp 𝕄 :=
  iprop((iLoc d ↦{qi} fl) ∗ (∃ tab : FVec F Spec.STab .f32, ⌜PK tab⌝ ∗ (tLoc d ↦{qt} tab))
    ∗ bigSep (Finset.univ : Finset (Fin 8)) fun k => iprop(∃ f, oLoc d ↦[blockSet (blkNo w k)]{fullShare} f))

/-- Handed back: the same shares, the eight blocks now holding the bag sums. -/
def tdA (PK : FVec F Spec.STab .f32 → Prop) (fl : IVec Spec.SFlat 32) (qi qt : PosShare TreeShare) (d : Dev nD) (w : Fin 32) : sProp 𝕄 :=
  iprop((iLoc d ↦{qi} fl) ∗ ∃ tab : FVec F Spec.STab .f32, ⌜PK tab⌝ ∗ (tLoc d ↦{qt} tab)
    ∗ bigSep (Finset.univ : Finset (Fin 8)) fun k => (oLoc d ↦[blockSet (blkNo w k)]{fullShare} (Spec.bagSums fl tab)))

end Cert.Proof.Bag

end
-- ==== Proof.Pay.lean ====
/-
  What the launch's handshakes carry for this program's one SparseCore call: per SparseCore, read shares of the flat index
  array and of the relaid table and the rows of the bag sums its sixteen tiles own; per tile, a sixteenth of those shares and
  its own eight blocks of sixteen rows. Going in, the rows hold anything; coming back, they hold the bag sums of the flat
  index array and of whatever the table holds. What is known of the table's contents travels as the predicate `PK`.
-/
import proofs.«203835_g19404662243951_cont_8to1_399_35_alg».proof.Proof.TileDefs
import Idealize.ShloMosaic.Lib.Transfers

noncomputable section

namespace Cert.Proof.Bag

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (PK : FVec F Spec.STab .f32 → Prop)

/-- The flat padded index array the SparseCore call is started on: the index argument padded to 64 words a bag. -/
def flatM (d : Dev nD) : IVec Spec.SFlat 32 := Spec.flatOf (m ((SparseCore.T d).loc main_arg0))

/-- SparseCore `c`'s read share of a whole input array, and tile `i`'s sixteenth of it. -/
abbrev qC (c : Nat) : PosShare TreeShare := shareTokN fullShare c
abbrev qT (c i : Nat) : PosShare TreeShare := shareTokN (qC c) i

/-- The worker number of tile `i` of SparseCore `c`, as an index of the 32 workers. -/
def widN (c i : Nat) : Fin 32 := ⟨(i * 2 + c) % 32, Nat.mod_lt _ (by decide)⟩

theorem widN_eq (c : Fin 2) (i : Fin 16) : widN c.val i.val = widF c i :=
  Fin.ext (Nat.mod_eq_of_lt (by have := c.isLt; have := i.isLt; omega))

variable [FloatOps F]

/-- What SparseCore `c` is handed: its shares and its sixteen tiles' blocks at whatever they hold; -/
def coreIn (d : Dev nD) (c : Nat) : sProp 𝕄 :=
  iprop((iLoc d ↦{qC c} flatM m d) ∗ (∃ tab : FVec F Spec.STab .f32, ⌜PK tab⌝ ∗ (tLoc d ↦{qC c} tab))
    ∗ bigSep (Finset.univ : Finset (Fin 16)) fun i => bigSep (Finset.univ : Finset (Fin 8)) fun k =>
        iprop(∃ f, oLoc d ↦[blockSet (blkNo (widN c i.val) k)]{fullShare} f))
/-- and what it hands back: the shares, the blocks holding the bag sums. -/
def coreOut (d : Dev nD) (c : Nat) : sProp 𝕄 :=
  iprop((iLoc d ↦{qC c} flatM m d) ∗ ∃ tab : FVec F Spec.STab .f32, ⌜PK tab⌝ ∗ (tLoc d ↦{qC c} tab)
    ∗ bigSep (Finset.univ : Finset (Fin 16)) fun i => bigSep (Finset.univ : Finset (Fin 8)) fun k =>
        (oLoc d ↦[blockSet (blkNo (widN c i.val) k)]{fullShare} (Spec.bagSums (flatM m d) tab)))

/-- Call 0's payloads; the kernel's proof consumes nothing of the launch's. -/
def P : (K (F := F)).Pay (nD := nD) (Val := Elt F) (Name := ℕ) (U := UU) where
  st := fun _ d c => coreIn m PK d c.val
  dn := fun _ d c => coreOut m PK d c.val
  go := fun _ d c i => goA PK (flatM m d) (qT c.val i.val) (qT c.val i.val) d (widN c.val i.val)
  td := fun _ d c i => tdA PK (flatM m d) (qT c.val i.val) (qT c.val i.val) d (widN c.val i.val)
  x := fun _ _ => iprop(emp)

instance P_storable : (P (F := F) m PK).IsStorable where
  st _ d c := by unfold P coreIn; infer_instance
  dn _ d c := by unfold P coreOut; infer_instance
  go _ _ _ _ := by unfold P goA; infer_instance
  td _ _ _ _ := by unfold P tdA; infer_instance

end Cert.Proof.Bag

end
-- ==== Proof.Region.lean ====
/-
  A TensorCore pipeline region entered from the SparseCore program's @main: the region's step of the pipeline kit, stated
  for the pipelines' own body table, is a step of the program over the SparseCore-extended table (a call of a pipeline's
  entry is the call of its lifted label).
-/
import proofs.«203835_g19404662243951_cont_8to1_399_35_alg».proof.Proof.Setup

noncomputable section

namespace Cert.Proof.Bag

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- Neither pipeline has prefetched tables: the admissible contents are the empty ones. -/
abbrev adm : (p : Fin 2) → (pcfgs (F := F) p).Adm := fun p => (cfgs p).toPCfg_adm

/-- The staging cells of the two pipelines are pairwise distinct. -/
theorem phinj : Function.Injective (Pipeline.cellOf (nD := nD) (τ := τ) (Pipeline.pin (pcfgs (F := F)) adm)) := cellOf_inj

variable (rdats : (p : Fin 2) → (c : Dev nD) → Pipeline.RDat τ (Elt F) (HIx 1) ℕ UU ℕ (Pipeline.pin (pcfgs (F := F)) adm p) c)

set_option maxHeartbeats 4000000 in
set_option backward.isDefEq.respectTransparency.types false in
/-- One region's step inside the SparseCore program: from the TensorCore's boundary, the region's entry state, the level
    facts and the pipeline's share of the staging cells' ghost state, the lifted custom call runs to the boundary and the
    region's exit state. -/
theorem wp_region [∀ e, Nonempty (Elt F e)] {p : Fin 2}
    (R : Pipeline.RDat.RegionSeg (pcfgs (F := F)) adm rdats (none : HIx 1) defs₀ 𝒱₀ (K (F := F)).L (K (F := F)).lev p)
    (d : Dev nD) (Φ : PUnit → sProp 𝕄) :
    iprop((iprop(boundary (T d) ∗ R.post d) -∗ Φ ⟨⟩) ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Φ := by
  have hl := (K (F := F)).wp_liftProg (D (F := F)) 𝒱 (T d) Set.univ none
    (Prog.lift (.customCall (Pipeline.entry p) ())) Φ
  have h := Pipeline.RDat.RegionSeg.wp (pcfgs (F := F)) adm rdats (none : HIx 1) phinj EP defs₀ 𝒱₀
    (K (F := F)).L (K (F := F)).lev R d none (fun u hu => by cases hu) (fun _ => .ret ⟨⟩) Φ
  refine BIBase.Entails.trans ?_ (BIBase.Entails.trans h hl)
  iintro ⟨Hk, Hb, Hpre, Hlv, Hg, Ht⟩
  isplitl [Hk]
  · iintro H
    rw [wp_ret]; imodintro
    iapply Hk; iexact H
  isplitl [Hb]; · iexact Hb
  isplitl [Hpre]; · iexact Hpre
  isplitl [Hlv]; · iexact Hlv
  isplitl [Hg] <;> iassumption

end Cert.Proof.Bag

end
-- ==== Proof.LaunchElem.lean ====
/-
  The launch element of the ghost state: the handshakes' rounds, the two pipelines' staging cells' rounds (funded here for
  both regions), nothing for the SparseCore body (its copies are local: counters only).
-/
import proofs.«203835_g19404662243951_cont_8to1_399_35_alg».proof.Proof.Pay
import proofs.«203835_g19404662243951_cont_8to1_399_35_alg».proof.Proof.Region

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ) (ρ : Dev nD → PrngReg)
variable (PK : FVec F Spec.STab .f32 → Prop)
variable [FloatOps F] [Named F]

/-- The launch element: the handshake cells' rounds; the pipelines' staging cells' rounds; no counter yet. -/
def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

omit [FloatOps F] [Named F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What the launch element leaves device `d`'s TensorCore for its two regions: each pipeline's staging cells' ghost state
    and duty tokens. -/
def G (d : Dev nD) : sProp 𝕄 :=
  iprop((bigSep Finset.univ fun p : Fin 2 => Pipeline.cellsGhost (Pipeline.pin (pcfgs (F := F)) adm) EP p d)
    ∗ bigSep Finset.univ fun p : Fin 2 => (Pipeline.toksInit (Pipeline.pin (pcfgs (F := F)) adm) EP p d : sProp 𝕄))

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m PK).x q thr) := by
  unfold u₀
  iintro Hu
  ihave H := (ownU_split _ _) $$ Hu
  icases H with ⟨HH, HP⟩
  imod (Pipeline.fund_ghost (Pipeline.pin (pcfgs (F := F)) adm) EP phinj) $$ HP with ⟨Hg, Ht⟩
  imodintro
  isplitl [HH]; · iexact HH
  isplitl [Hg Ht]
  · unfold G
    rw [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.Bag

end
-- ==== Proof.Split.lean ====
/-
  How one SparseCore's operands for the bag-sum call split among its sixteen tiles and how the tiles' results gather
  back: the two input arrays are read-only, so each tile takes a read share of the whole array and the remainder of the
  SparseCore's share waits for them; the tiles return the table at contents of their own choosing, which agree with the
  contents the remainder holds; the rows of the sums are already grouped by tile. Then the partition of the sums' rows
  into the 256 blocks of sixteen rows, grouped by SparseCore, tile and block.
-/
import proofs.«203835_g19404662243951_cont_8to1_399_35_alg».proof.Proof.Pay

noncomputable section

namespace Cert.Proof.Bag

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop pointsTo_toks_split pointsTo_toks_join)

variable {F : FTy → Type}

local notation "𝕄" => MT nD τ sig (HIx 1) (Elt F) ℕ UU ℕ

/-! ## Two general steps -/

/-- A resource threaded through a family: if it survives each member's passage it survives the family's. -/
theorem bigSep_thread {I : Type} (s : Finset I) (R : sProp 𝕄) (Φ Ψ : I → sProp 𝕄)
    (h : ∀ i ∈ s, iprop(R ∗ Φ i) ⊢ iprop(R ∗ Ψ i)) : iprop(R ∗ bigSep s Φ) ⊢ iprop(R ∗ bigSep s Ψ) := by
  classical
  induction s using Finset.induction_on with
  | empty => exact .rfl
  | insert i s hi ih =>
    have ih' := ih fun i' hi' => h i' (Finset.mem_insert_of_mem hi')
    have hi' := h i (Finset.mem_insert_self i s)
    refine BIBase.Entails.trans (show iprop(R ∗ bigSep (insert i s) Φ) ⊢ iprop(R ∗ (Φ i ∗ bigSep s Φ)) from Entails.of_eq (by rw [BI.bigSep_insert hi]; rfl)) ?_
    refine BIBase.Entails.trans ?_ (show iprop(R ∗ (Ψ i ∗ bigSep s Ψ)) ⊢ iprop(R ∗ bigSep (insert i s) Ψ) from Entails.of_eq (by rw [BI.bigSep_insert hi]; rfl))
    iintro ⟨HR, HΦ, Hs⟩
    ihave H1 := hi' $$ [HR HΦ]
    · isplitl [HR]; · iexact HR
      iexact HΦ
    icases H1 with ⟨HR, HΨ⟩
    ihave H2 := ih' $$ [HR Hs]
    · isplitl [HR]; · iexact HR
      iexact Hs
    icases H2 with ⟨HR, Hs⟩
    isplitl [HR]; · iexact HR
    isplitl [HΨ]; · iexact HΨ
    iexact Hs

/-- Two read shares of one whole array hold the same contents. -/
theorem pointsTo_same {ℓ : Loc nD τ sig} {q₁ q₂ : PosShare TreeShare} {f g : Buf (Elt F) ℓ} :
    iprop((ℓ ↦{q₁} f) ∗ ℓ ↦{q₂} g) ⊢ (iprop(⌜g = f⌝ ∗ (ℓ ↦{q₁} f) ∗ ℓ ↦{q₂} g) : sProp 𝕄) := by
  refine BIBase.Entails.trans (persistent_entails_right pointsTo_agree) ?_
  iintro ⟨%hag, H⟩
  isplitr
  · ipureintro; funext i; exact (hag i (Finset.mem_inter.mpr ⟨Finset.mem_univ _, Finset.mem_univ _⟩)).1.symm
  · iexact H

/-! ## Read shares out to sixteen holders and back -/

variable [FloatOps F]

section Shares

variable (PK : FVec F Spec.STab .f32 → Prop) (fl : IVec Spec.SFlat 32) (d : Dev nD) (q : PosShare TreeShare)

/-- A holder's returned table share, at contents of its choosing, beside the remainder: the contents are the remainder's. -/
theorem table_back (tab : FVec F Spec.STab .f32) (r qi : PosShare TreeShare) (B : FVec F Spec.STab .f32 → sProp 𝕄) :
    iprop((tLoc d ↦{r} tab) ∗ ∃ tab' : FVec F Spec.STab .f32, ⌜PK tab'⌝ ∗ (tLoc d ↦{qi} tab') ∗ B tab')
      ⊢ iprop((tLoc d ↦{r} tab) ∗ ((tLoc d ↦{qi} tab) ∗ B tab)) := by
  iintro ⟨Hr, %tab', -, Hq, HB⟩
  ihave Hag := (pointsTo_same (F := F)) $$ [Hr Hq]
  · isplitl [Hr]; · iexact Hr
    iexact Hq
  icases Hag with ⟨%he, Hr, Hq⟩
  subst he
  isplitl [Hr]; · iexact Hr
  isplitl [Hq]; · iexact Hq
  iexact HB

/-- The split of one SparseCore's operands over abstract per-holder row assertions `A i` (going in) and `B i tab`
    (coming back, at the table's contents). -/
theorem split16 (A : Fin 16 → sProp 𝕄) (B : Fin 16 → FVec F Spec.STab .f32 → sProp 𝕄) :
    iprop((iLoc d ↦{q} fl) ∗ (∃ tab : FVec F Spec.STab .f32, ⌜PK tab⌝ ∗ (tLoc d ↦{q} tab)) ∗ bigSep Finset.univ A)
      ⊢ |={Set.univ}=> iprop(
        (bigSep Finset.univ fun i : Fin 16 =>
          iprop((iLoc d ↦{shareTokN q i.val} fl) ∗ (∃ tab : FVec F Spec.STab .f32, ⌜PK tab⌝ ∗ (tLoc d ↦{shareTokN q i.val} tab)) ∗ A i))
        ∗ ((bigSep Finset.univ fun i : Fin 16 =>
            iprop((iLoc d ↦{shareTokN q i.val} fl) ∗ ∃ tab : FVec F Spec.STab .f32, ⌜PK tab⌝ ∗ (tLoc d ↦{shareTokN q i.val} tab) ∗ B i tab))
          -∗ iprop((iLoc d ↦{q} fl) ∗ ∃ tab : FVec F Spec.STab .f32, ⌜PK tab⌝ ∗ (tLoc d ↦{q} tab) ∗ bigSep Finset.univ fun i => B i tab))) := by
  iintro ⟨Hi, ⟨%tab, %hPK, Ht⟩, HA⟩
  ihave Hi' := (pointsTo_toks_split q 16) $$ Hi
  icases Hi' with ⟨Hir, Hits⟩
  ihave Ht' := (pointsTo_toks_split q 16) $$ Ht
  icases Ht' with ⟨Htr, Htts⟩
  imodintro
  isplitl [Hits Htts HA]
  · rw [bigSep_sep', bigSep_sep']
    isplitl [Hits]; · iexact Hits
    isplitl [Htts]
    · have hone : ∀ i : Fin 16, (tLoc d ↦{shareTok q 16 i} tab : sProp 𝕄)
          ⊢ iprop(∃ tab : FVec F Spec.STab .f32, ⌜PK tab⌝ ∗ (tLoc d ↦{shareTokN q i.val} tab)) := fun i => by
        iintro H; iexists tab; isplitr; · ipureintro; exact hPK
        iexact H
      iapply (show (bigSep Finset.univ fun i : Fin 16 => (tLoc d ↦{shareTok q 16 i} tab : sProp 𝕄))
          ⊢ bigSep Finset.univ fun i : Fin 16 => iprop(∃ tab : FVec F Spec.STab .f32, ⌜PK tab⌝ ∗ (tLoc d ↦{shareTokN q i.val} tab))
        from bigSep_mono fun i _ => hone i)
      iexact Htts
    · iexact HA
  · iintro Htd
    ihave Htd' := (Entails.of_eq (bigSep_sep' Finset.univ (fun i : Fin 16 => (iLoc d ↦{shareTokN q i.val} fl : sProp 𝕄))
      (fun i : Fin 16 => iprop(∃ tab : FVec F Spec.STab .f32, ⌜PK tab⌝ ∗ (tLoc d ↦{shareTokN q i.val} tab) ∗ B i tab)))) $$ Htd
    icases Htd' with ⟨Hits, Hex⟩
    isplitl [Hir Hits]
    · iapply (pointsTo_toks_join q 16)
      isplitl [Hir]; · iexact Hir
      iexact Hits
    iexists tab
    isplitr; · ipureintro; exact hPK
    ihave H := (bigSep_thread (F := F) Finset.univ (tLoc d ↦{shareDrop q 16} tab)
      (fun i : Fin 16 => iprop(∃ tab' : FVec F Spec.STab .f32, ⌜PK tab'⌝ ∗ (tLoc d ↦{shareTokN q i.val} tab') ∗ B i tab'))
      (fun i : Fin 16 => iprop((tLoc d ↦{shareTokN q i.val} tab) ∗ B i tab))
      (fun i _ => table_back PK d tab (shareDrop q 16) (shareTokN q i.val) (B i))) $$ [Htr Hex]
    · isplitl [Htr]; · iexact Htr
      iexact Hex
    icases H with ⟨Htr, H⟩
    ihave H' := (Entails.of_eq (bigSep_sep' Finset.univ (fun i : Fin 16 => (tLoc d ↦{shareTokN q i.val} tab : sProp 𝕄))
      (fun i : Fin 16 => B i tab))) $$ H
    icases H' with ⟨Htts, HB⟩
    isplitl [Htr Htts]
    · iapply (pointsTo_toks_join q 16)
      isplitl [Htr]; · iexact Htr
      iexact Htts
    iexact HB

end Shares

/-! ## The split of the call's operands -/

section Split

variable (m : (ℓ : Loc nD τ sig) → Buf (Elt F) ℓ) (PK : FVec F Spec.STab .f32 → Prop)

/-- SparseCore `c`'s shares go out as the sixteen tiles' tokens and come back joined; its rows are already grouped by tile. -/
theorem vecSplit : (K (F := F)).VecSplit' (P m PK) 0 := by
  intro d c
  show coreIn m PK d c.val ⊢ |={Set.univ}=> iprop(
      (bigSep Finset.univ fun i : Fin 16 => goA PK (flatM m d) (qT c.val i.val) (qT c.val i.val) d (widN c.val i.val))
      ∗ ((bigSep Finset.univ fun i : Fin 16 => tdA PK (flatM m d) (qT c.val i.val) (qT c.val i.val) d (widN c.val i.val))
          -∗ coreOut m PK d c.val))
  unfold coreIn coreOut goA tdA
  exact split16 PK (flatM m d) d (qC c.val)
    (fun i => bigSep (Finset.univ : Finset (Fin 8)) fun k =>
      iprop(∃ f, oLoc d ↦[blockSet (blkNo (widN c.val i.val) k)]{fullShare} f))
    (fun i tab => bigSep (Finset.univ : Finset (Fin 8)) fun k =>
      (oLoc d ↦[blockSet (blkNo (widN c.val i.val) k)]{fullShare} (Spec.bagSums (flatM m d) tab)))

end Split

/-! ## The rows of the sums: 256 blocks of sixteen rows, by SparseCore, tile and block -/

omit [FloatOps F] in
/-- A block's elements are its rectangle's. -/
theorem blockSet_eq (n : Fin 256) : blockSet n = (blk n).set :=
  View.set_slice_whole _ _

omit [FloatOps F] in
theorem blocks_disjoint : ∀ n ∈ (Finset.univ : Finset (Fin 256)), ∀ n' ∈ (Finset.univ : Finset (Fin 256)), n ≠ n' →
    Disjoint (blockSet n) (blockSet n') :=
  fun n _ n' _ h => by rw [blockSet_eq, blockSet_eq]; exact Rect.part_disjoint hdiv256 h

omit [FloatOps F] in
theorem blocks_cover : (Finset.univ : Finset (Fin 256)).biUnion blockSet = Finset.univ :=
  (Finset.biUnion_congr rfl fun n _ => blockSet_eq n).trans (Rect.biUnion_part hdiv256)

omit [FloatOps F] in
/-- The whole array is its 256 blocks. -/
theorem oPts_blocks (d : Dev nD) (f : Buf (Elt F) (oLoc d)) :
    (oLoc d ↦{fullShare} f : sProp 𝕄) = bigSep Finset.univ fun n : Fin 256 => oLoc d ↦[blockSet n]{fullShare} f := by
  rw [← pointsTo_biUnion Finset.univ (ℓ := oLoc d) blockSet blocks_disjoint, blocks_cover]; try rfl

/-- Block `k` of tile `i` of SparseCore `c` is block `8 (2 i + c) + k` of the 256; every block is one of these, once. -/
def blockEquiv : Fin 2 × Fin 16 × Fin 8 ≃ Fin 256 where
  toFun p := blkNo (widN p.1.val p.2.1.val) p.2.2
  invFun n := (⟨n.val / 8 % 2, Nat.mod_lt _ (by decide)⟩, ⟨n.val / 16, by have := n.isLt; omega⟩, ⟨n.val % 8, Nat.mod_lt _ (by decide)⟩)
  left_inv := by
    rintro ⟨c, i, k⟩
    have hc := c.isLt; have hi := i.isLt; have hk := k.isLt
    have hw : (i.val * 2 + c.val) % 32 = i.val * 2 + c.val := Nat.mod_eq_of_lt (by omega)
    refine Prod.ext (Fin.ext ?_) (Prod.ext (Fin.ext ?_) (Fin.ext ?_))
    · show (8 * ((i.val * 2 + c.val) % 32) + k.val) / 8 % 2 = c.val
      rw [hw]; omega
    · show (8 * ((i.val * 2 + c.val) % 32) + k.val) / 16 = i.val
      rw [hw]; omega
    · show (8 * ((i.val * 2 + c.val) % 32) + k.val) % 8 = k.val
      rw [hw]; omega
  right_inv := by
    intro n
    have hn := n.isLt
    apply Fin.ext
    show 8 * ((n.val / 16 * 2 + n.val / 8 % 2) % 32) + n.val % 8 = n.val
    omega

omit [FloatOps F] in
/-- The whole array of sums is its blocks, grouped by SparseCore, tile and block. -/
theorem oRows_split (d : Dev nD) (f : Buf (Elt F) (oLoc d)) :
    (oLoc d ↦{fullShare} f : sProp 𝕄) = bigSep Finset.univ fun c : Fin 2 => bigSep Finset.univ fun i : Fin 16 =>
      bigSep Finset.univ fun k : Fin 8 => oLoc d ↦[blockSet (blkNo (widN c.val i.val) k)]{fullShare} f := by
  rw [oPts_blocks, bigSep_univ_equiv blockEquiv, bigSep_univ_prod]
  refine bigSep_congr fun c _ => ?_
  rw [bigSep_univ_prod]
  rfl

omit [FloatOps F] in
/-- Going in: the whole array, at whatever it holds, as every tile's blocks at some contents. -/
theorem oRows_any (d : Dev nD) (f : Buf (Elt F) (oLoc d)) :
    (oLoc d ↦{fullShare} f : sProp 𝕄) ⊢ bigSep Finset.univ fun c : Fin 2 => bigSep Finset.univ fun i : Fin 16 =>
      bigSep Finset.univ fun k : Fin 8 => iprop(∃ f', oLoc d ↦[blockSet (blkNo (widN c.val i.val) k)]{fullShare} f') := by
  rw [oRows_split]
  have hone : ∀ (c : Fin 2) (i : Fin 16) (k : Fin 8), (oLoc d ↦[blockSet (blkNo (widN c.val i.val) k)]{fullShare} f : sProp 𝕄)
      ⊢ iprop(∃ f', oLoc d ↦[blockSet (blkNo (widN c.val i.val) k)]{fullShare} f') := fun c i k => by
    iintro H; iexists f; iexact H
  exact bigSep_mono fun c _ => bigSep_mono fun i _ => bigSep_mono fun k _ => hone c i k

omit [FloatOps F] in
/-- Coming back: every tile's blocks at one contents are the whole array at it. -/
theorem oRows_join (d : Dev nD) (g : Buf (Elt F) (oLoc d)) :
    (bigSep Finset.univ fun c : Fin 2 => bigSep Finset.univ fun i : Fin 16 =>
      bigSep Finset.univ fun k : Fin 8 => (oLoc d ↦[blockSet (blkNo (widN c.val i.val) k)]{fullShare} g : sProp 𝕄))
      ⊢ (oLoc d ↦{fullShare} g : sProp 𝕄) :=
  Entails.of_eq (oRows_split d g).symm

end Cert.Proof.Bag

end
-- ==== Proof.StDn.lean ====
/-
  Around the SparseCore call on the TensorCore's side: the three arrays held whole become the two SparseCores' operands
  and a remainder of the two read-only arrays' shares; the two SparseCores' results and that remainder are the inputs
  whole again, unchanged, and the sums at the bag sums of the table's contents.
-/
import proofs.«203835_g19404662243951_cont_8to1_399_35_alg».proof.Proof.Split

noncomputable section

namespace Cert.Proof.Bag

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop pointsTo_toks_split pointsTo_toks_join)

variable {F : FTy → Type} [FloatOps F]

local notation "𝕄" => MT nD τ sig (HIx 1) (Elt F) ℕ UU ℕ

variable (m : (ℓ : Loc nD τ sig) → Buf (Elt F) ℓ) (PK : FVec F Spec.STab .f32 → Prop)

set_option maxRecDepth 16384 in
omit [FloatOps F] in
/-- A family over the call's SparseCores is a family over the two of them. -/
theorem bigSep_cores (Φ : ℕ → sProp 𝕄) :
    (bigSep Finset.univ fun c : Fin ((K (F := F)).nCore 0) => Φ c.val) = bigSep Finset.univ fun c : Fin 2 => Φ c.val :=
  (bigSep_univ_equiv (finCongr (nCore_zero (F := F))) (fun c : Fin 2 => Φ c.val)).symm

/-- Going in: each SparseCore takes a read share of the flat indices and of the table and its sixteen tiles' blocks of the
    sums; what is left of the two read shares stays behind. -/
theorem st0_intro (d : Dev nD) (tab : FVec F Spec.STab .f32) (f : Buf (Elt F) (oLoc d)) (h : PK tab) :
    iprop((iLoc d ↦{fullShare} flatM m d) ∗ (tLoc d ↦{fullShare} tab) ∗ (oLoc d ↦{fullShare} f))
      ⊢ iprop(((iLoc d ↦{shareDrop fullShare 2} flatM m d) ∗ (tLoc d ↦{shareDrop fullShare 2} tab))
        ∗ bigSep Finset.univ fun c : Fin ((K (F := F)).nCore 0) => (P m PK).st 0 d c) := by
  rw [show (bigSep Finset.univ fun c : Fin ((K (F := F)).nCore 0) => (P m PK).st 0 d c)
      = bigSep Finset.univ fun c : Fin ((K (F := F)).nCore 0) => coreIn m PK d c.val from rfl,
    bigSep_cores (F := F) (fun c => coreIn m PK d c)]
  unfold coreIn
  rw [bigSep_sep', bigSep_sep']
  iintro ⟨Hi, Ht, Ho⟩
  ihave Hi' := (pointsTo_toks_split fullShare 2) $$ Hi
  icases Hi' with ⟨Hir, Hits⟩
  ihave Ht' := (pointsTo_toks_split fullShare 2) $$ Ht
  icases Ht' with ⟨Htr, Htts⟩
  ihave Ho' := (oRows_any (F := F) d f) $$ Ho
  isplitl [Hir Htr]
  · isplitl [Hir]; · iexact Hir
    iexact Htr
  isplitl [Hits]; · iexact Hits
  isplitl [Htts]
  · have hone : ∀ c : Fin 2, (tLoc d ↦{shareTok fullShare 2 c} tab : sProp 𝕄)
        ⊢ iprop(∃ tab : FVec F Spec.STab .f32, ⌜PK tab⌝ ∗ (tLoc d ↦{qC c.val} tab)) := fun c => by
      iintro H; iexists tab; isplitr; · ipureintro; exact h
      iexact H
    iapply (show (bigSep Finset.univ fun c : Fin 2 => (tLoc d ↦{shareTok fullShare 2 c} tab : sProp 𝕄))
        ⊢ bigSep Finset.univ fun c : Fin 2 => iprop(∃ tab : FVec F Spec.STab .f32, ⌜PK tab⌝ ∗ (tLoc d ↦{qC c.val} tab))
      from bigSep_mono fun c _ => hone c)
    iexact Htts
  · iexact Ho'

set_option maxRecDepth 16384 in
/-- Coming back: each SparseCore's table share, at contents of its choosing, agrees with the remainder's; the shares join
    and the blocks, all at the bag sums of those contents, are the whole array of sums. -/
theorem dn0_elim (d : Dev nD) (tab : FVec F Spec.STab .f32) :
    iprop(((iLoc d ↦{shareDrop fullShare 2} flatM m d) ∗ (tLoc d ↦{shareDrop fullShare 2} tab))
        ∗ bigSep Finset.univ fun c : Fin ((K (F := F)).nCore 0) => (P m PK).dn 0 d c)
      ⊢ iprop((iLoc d ↦{fullShare} flatM m d) ∗ (tLoc d ↦{fullShare} tab)
        ∗ (oLoc d ↦{fullShare} (Spec.bagSums (flatM m d) tab : Buf (Elt F) (oLoc d)))) := by
  rw [show (bigSep Finset.univ fun c : Fin ((K (F := F)).nCore 0) => (P m PK).dn 0 d c)
      = bigSep Finset.univ fun c : Fin ((K (F := F)).nCore 0) => coreOut m PK d c.val from rfl,
    bigSep_cores (F := F) (fun c => coreOut m PK d c)]
  unfold coreOut
  rw [bigSep_sep']
  iintro ⟨⟨Hir, Htr⟩, Hits, Hex⟩
  isplitl [Hir Hits]
  · iapply (pointsTo_toks_join fullShare 2)
    isplitl [Hir]; · iexact Hir
    iexact Hits
  ihave H := (bigSep_thread (F := F) Finset.univ (tLoc d ↦{shareDrop fullShare 2} tab)
    (fun c : Fin 2 => iprop(∃ tab' : FVec F Spec.STab .f32, ⌜PK tab'⌝ ∗ (tLoc d ↦{qC c.val} tab')
      ∗ bigSep (Finset.univ : Finset (Fin 16)) fun i => bigSep (Finset.univ : Finset (Fin 8)) fun k =>
        (oLoc d ↦[blockSet (blkNo (widN c.val i.val) k)]{fullShare} (Spec.bagSums (flatM m d) tab'))))
    (fun c : Fin 2 => iprop((tLoc d ↦{qC c.val} tab)
      ∗ bigSep (Finset.univ : Finset (Fin 16)) fun i => bigSep (Finset.univ : Finset (Fin 8)) fun k =>
        (oLoc d ↦[blockSet (blkNo (widN c.val i.val) k)]{fullShare} (Spec.bagSums (flatM m d) tab))))
    (fun c _ => table_back PK d tab (shareDrop fullShare 2) (qC c.val)
      (fun tab' => bigSep (Finset.univ : Finset (Fin 16)) fun i => bigSep (Finset.univ : Finset (Fin 8)) fun k =>
        (oLoc d ↦[blockSet (blkNo (widN c.val i.val) k)]{fullShare} (Spec.bagSums (flatM m d) tab'))))) $$ [Htr Hex]
  · isplitl [Htr]; · iexact Htr
    iexact Hex
  icases H with ⟨Htr, H⟩
  ihave H' := (Entails.of_eq (bigSep_sep' Finset.univ (fun c : Fin 2 => (tLoc d ↦{qC c.val} tab : sProp 𝕄))
    (fun c : Fin 2 => bigSep (Finset.univ : Finset (Fin 16)) fun i => bigSep (Finset.univ : Finset (Fin 8)) fun k =>
      (oLoc d ↦[blockSet (blkNo (widN c.val i.val) k)]{fullShare} (Spec.bagSums (flatM m d) tab))))) $$ H
  icases H' with ⟨Htts, HB⟩
  isplitl [Htr Htts]
  · iapply (pointsTo_toks_join fullShare 2)
    isplitl [Htr]; · iexact Htr
    iexact Htts
  iapply (oRows_join (F := F) d (Spec.bagSums (flatM m d) tab))
  iexact HB

end Cert.Proof.Bag

end
-- ==== Proof.FfnnData.lean ====
/-
  Region 1 (the feed-forward head as a pipeline of 8 points over blocks of 512 rows): the pipeline's proof data on a core.

  The arrays are what the region finds in them (`V`: the core's buffers when the region is entered). The five input
  windows' staging buffers hold their blocks at every point, fetched there or not (the four parameter arrays are one block
  each, fetched at the first point and left in place); the result window's buffer is left at the head of the block of
  sums, `Ffnn.block`, and written back at every point. Between points the body keeps nothing but the core's scoped
  buffers that no window stages, untouched. What the core owes does not change, and the pairs its waits have recorded stay within a given set `B`.
-/
import proofs.«203835_g19404662243951_cont_8to1_399_35_alg».proof.Proof.Setup
import proofs.«203835_g19404662243951_cont_8to1_399_35_alg».proof.Proof.FfnnSpec
import proofs.«203835_g19404662243951_cont_8to1_399_35_alg».proof.Proof.Gen.KernelIdeal.Points
import Idealize.ShloMosaic.Lib.Pipeline.FrameBody
import Idealize.ShloMosaic.Lib.Pipeline.Value

noncomputable section

namespace Cert.Proof.Ffnn

open Cert.Proof.Ffnn

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F] [Named F]

local notation "𝕄" => MT nD τ sig (HIx 1) (Elt F) ℕ Bag.UU ℕ

/-- The scale: the program's constant for 1/50. -/
abbrev k50 : F .f32 := Named.named κ "inv_50" 0x3CA3D70A#32

variable (c : Dev nD) (V : (b : Ref sig .tc) → Buf (Elt F) ((c : Thread nD τ).loc b)) (O : CellTallies nD τ sig (HIx 1))
  (B : Set (SemLoc sig × HIx 1))

/-- Window `w`'s block at point `t`, read off its array as the region finds it. -/
def iblk (w : Fin cfg2.W) (t : Fin cfg2.N) : ((cfg2.win w).xblock (cfg2.grid.coords t)).Idx → Elt F (cfg2.win w).elt :=
  ((cfg2.win w).blk t).view.read (Elt F) (V (Pipeline.arrRef spec2 w))

/-- The head of the block of sums at point `t`. -/
def oblk (t : Fin cfg2.N) : FVec F SO .f32 :=
  block k50 (iblk c V 0 t) (iblk c V 1 t) (iblk c V 2 t) (iblk c V 3 t) (iblk c V 4 t)

/-- The proof data of pipeline 1 on core `c`. -/
def dat1 : Dat τ (Elt F) (HIx 1) ℕ Bag.UU ℕ cfg2 c where
  A w := V (Pipeline.arrRef spec2 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => oblk c V t
  Φ _ := Pipeline.scopedRest (Ix := HIx 1) (Name := ℕ) (U := Bag.UU) (Lvl := ℕ) (Val := Elt F) spec2 c
  q _ := fullShare
  owed _ := O
  recorded _ := B

theorem A_eq (w : Fin cfg2.W) : (dat1 c V O B).A w = V (Pipeline.arrRef spec2 w) := rfl

theorem after_0 (t : Fin cfg2.N) : (dat1 c V O B).after 0 t = iblk c V 0 t := by dsimp only [dat1]
theorem after_1 (t : Fin cfg2.N) : (dat1 c V O B).after 1 t = iblk c V 1 t := by dsimp only [dat1]
theorem after_2 (t : Fin cfg2.N) : (dat1 c V O B).after 2 t = iblk c V 2 t := by dsimp only [dat1]
theorem after_3 (t : Fin cfg2.N) : (dat1 c V O B).after 3 t = iblk c V 3 t := by dsimp only [dat1]
theorem after_4 (t : Fin cfg2.N) : (dat1 c V O B).after 4 t = iblk c V 4 t := by dsimp only [dat1]
theorem after_5 (t : Fin cfg2.N) : (dat1 c V O B).after 5 t = oblk c V t := by dsimp only [dat1]

/-- Each input's current staging buffer holds its block at every point. -/
theorem before_0 (t : Fin cfg2.N) (d) : (dat1 c V O B).before 0 t d = iblk c V 0 t :=
  ((dat1 c V O B).before_in_eq_fetched 0 rfl (fun _ => rfl) (fun _ _ _ => rfl) (fun t => by rw [after_0]; rfl) t d).trans
    (by unfold Dat.fetched Dat.blockOf iblk; rfl)
theorem before_1 (t : Fin cfg2.N) (d) : (dat1 c V O B).before 1 t d = iblk c V 1 t :=
  ((dat1 c V O B).before_in_eq_fetched 1 rfl (fun _ => rfl) (fun _ _ _ => rfl) (fun t => by rw [after_1]; rfl) t d).trans
    (by unfold Dat.fetched Dat.blockOf iblk; rfl)
theorem before_2 (t : Fin cfg2.N) (d) : (dat1 c V O B).before 2 t d = iblk c V 2 t :=
  ((dat1 c V O B).before_in_eq_fetched 2 rfl (fun _ => rfl) (fun _ _ _ => rfl) (fun t => by rw [after_2]; rfl) t d).trans
    (by unfold Dat.fetched Dat.blockOf iblk; rfl)
theorem before_3 (t : Fin cfg2.N) (d) : (dat1 c V O B).before 3 t d = iblk c V 3 t :=
  ((dat1 c V O B).before_in_eq_fetched 3 rfl (fun _ => rfl) (fun _ _ _ => rfl) (fun t => by rw [after_3]; rfl) t d).trans
    (by unfold Dat.fetched Dat.blockOf iblk; rfl)
theorem before_4 (t : Fin cfg2.N) (d) : (dat1 c V O B).before 4 t d = iblk c V 4 t :=
  ((dat1 c V O B).before_in_eq_fetched 4 rfl (fun _ => rfl) (fun _ _ _ => rfl) (fun t => by rw [after_4]; rfl) t d).trans
    (by unfold Dat.fetched Dat.blockOf iblk; rfl)

/-- The result's staging buffer is fresh at every point: the block is written back after each. -/
theorem before_5 (t : Fin cfg2.N) (d) : (dat1 c V O B).before 5 t d = d := by
  refine (dat1 c V O B).before_out_reset 5 rfl t ?_ d
  by_cases h : t.val = 0
  · exact .inl h
  · exact .inr ⟨h, flush2_5 _⟩

/-- The pairs at or below level `b` on the core's TensorCore. -/
abbrev lvlSet (b : ℕ) : Set (SemLoc sig × HIx 1) := {p | (Bag.K (F := F)).lev ((c : Thread nD τ), p.1) p.2 ≤ b}

/-- The proof data with the recorded pairs bounded by a level. -/
abbrev dat1b (b : ℕ) : Dat τ (Elt F) (HIx 1) ℕ Bag.UU ℕ cfg2 c := dat1 c V O (lvlSet (F := F) c b)

end Cert.Proof.Ffnn

end
-- ==== Proof.Main.lean ====
/-
  @main on the TensorCore: the transpose, the relaying region, the reshapes and the pad, the SparseCore call, the two
  reshapes, the dense region.
-/
import proofs.«203835_g19404662243951_cont_8to1_399_35_alg».proof.Proof.LaunchElem
import proofs.«203835_g19404662243951_cont_8to1_399_35_alg».proof.Proof.StDn
import proofs.«203835_g19404662243951_cont_8to1_399_35_alg».proof.Proof.FfnnData

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ) (ρ : Dev nD → PrngReg)
variable (PK : FVec F Spec.STab .f32 → Prop)
variable [FloatOps F] [Named F]

/-- Device `d`'s TensorCore thread. -/
abbrev TT (d : Dev nD) : Thread nD τ := SparseCore.T d

/-! ## @main's arrays as one held set -/

abbrev rr (b : Ref sig .tc) : DevRef τ sig := Proc.devRef .tc b

/-- The TensorCore's references into the device's buffers. -/
def refEmb : Ref sig .tc ↪ DevRef τ sig := ⟨Proc.devRef .tc, Proc.devRef_injective _⟩

/-- @main's arrays: every unscoped buffer of the TensorCore. -/
abbrev Sall : Finset (DevRef τ sig) :=
  {rr main_arg0, rr main_arg1, rr main_arg2, rr main_arg3, rr main_arg4, rr main_arg5, rr main_v0, rr main_v1, rr main_v2, rr main_c,
    rr main_call0_v0, rr main_v3, rr main_v4, rr main_v5, rr main_v6, rr main_v7, rr main_v8}

theorem Sall_eq : (Finset.univ.filter fun b : Ref sig .tc => ¬ b.isScoped).map refEmb = Sall := by decide

/-- The launch valuation. -/
def V0 (d : Dev nD) : Valuation τ sig (Elt F) := fun b => m (d, b)

omit [FloatOps F] [Named F] in
theorem unscoped_held (d : Dev nD) (W : Valuation τ sig (Elt F)) :
    (unscopedBufs d (fun b => W (rr b)) : sProp 𝕄) = held (TT d) Sall W := by
  unfold unscopedBufs held
  rw [← Sall_eq, bigSep_map]
  rfl

/-! ## The host operations of @main -/

section Ops

abbrev o1 : HloOp τ sig (Elt F) :=
  StableHlo.unary main_arg1 main_v0 ((transpose S64x1000000 [1, 0] · Shapes1.Facts₀.transposes_S1000000x64_S64x1000000_1_0) : (⟨S1000000x64, .f32⟩ : BufTy).Contents (Elt F) → (⟨S64x1000000, .f32⟩ : BufTy).Contents (Elt F))
abbrev o2 : HloOp τ sig (Elt F) := StableHlo.reshape main_v1 main_v2 rfl Shapes2.Facts₀.shapeCasts_S31x256x64x128_S507904x128
abbrev o3 : HloOp τ sig (Elt F) := StableHlo.nullary main_c (constantI S_ 32 0#32)
abbrev o4 : HloOp τ sig (Elt F) := StableHlo.TRef.unary (StableHlo.TRef.of main_c : StableHlo.TRef sig ⟨S_, .i32⟩) main_call0.v0 id
abbrev o5 : HloOp τ sig (Elt F) :=
  StableHlo.TRef.binary (StableHlo.TRef.of main_arg0 : StableHlo.TRef sig ⟨S4096x50, .i32⟩) main_call0.v0 main_call0.v1 (fun x v => pad S4096x64 ![0, 0] ![0, 14] ![0, 0] x v Shapes2.Facts₀.pads_S4096x50_S4096x64_000_0140 Shapes2.Facts₀.h_S_)
abbrev o6 : HloOp τ sig (Elt F) := StableHlo.reshape main_v3 main_v4 rfl Shapes2.Facts₀.shapeCasts_S4096x64_S262144
abbrev o7 : HloOp τ sig (Elt F) := StableHlo.reshape main_arg3 main_v6 rfl Shapes2.Facts₀.shapeCasts_S256_S1x256
abbrev o8 : HloOp τ sig (Elt F) := StableHlo.reshape main_arg5 main_v7 rfl Shapes2.Facts₀.shapeCasts_S50_S1x50

theorem h1 : (o1 (F := F)).bufs ⊆ Sall := show ({rr main_arg1, rr main_v0} : Finset (DevRef τ sig)) ⊆ Sall by decide
theorem h2 : (o2 (F := F)).bufs ⊆ Sall := show ({rr main_v1, rr main_v2} : Finset (DevRef τ sig)) ⊆ Sall by decide
theorem h3 : (o3 (F := F)).bufs ⊆ Sall := show ({rr main_c} : Finset (DevRef τ sig)) ⊆ Sall by decide
theorem h4 : (o4 (F := F)).bufs ⊆ Sall := show ({rr main_c, rr main_call0_v0} : Finset (DevRef τ sig)) ⊆ Sall by decide
theorem h5 : (o5 (F := F)).bufs ⊆ Sall := show ({rr main_arg0, rr main_call0_v0, rr main_v3} : Finset (DevRef τ sig)) ⊆ Sall by decide
theorem h6 : (o6 (F := F)).bufs ⊆ Sall := show ({rr main_v3, rr main_v4} : Finset (DevRef τ sig)) ⊆ Sall by decide
theorem h7 : (o7 (F := F)).bufs ⊆ Sall := show ({rr main_arg3, rr main_v6} : Finset (DevRef τ sig)) ⊆ Sall by decide
theorem h8 : (o8 (F := F)).bufs ⊆ Sall := show ({rr main_arg5, rr main_v7} : Finset (DevRef τ sig)) ⊆ Sall by decide

end Ops

/-! ## Taking an array out of the held set and putting it back -/

omit [FloatOps F] [Named F] in
theorem held_update (c : Thread nD τ) (S : Finset (DevRef τ sig)) (W : Valuation τ sig (Elt F)) (b : DevRef τ sig) (f : b.ty.Contents (Elt F))
    (hb : b ∉ S) : (held c S (Function.update W b f) : sProp 𝕄) = held c S W :=
  StableHlo.held_congr c fun b' hb' => Function.update_of_ne (fun (e : b' = b) => hb (e ▸ hb')) _ _

omit [FloatOps F] [Named F] in
theorem held_take (c : Thread nD τ) (S : Finset (DevRef τ sig)) (W : Valuation τ sig (Elt F)) (b : DevRef τ sig) (hb : b ∈ S) :
    (held c S W : sProp 𝕄) = iprop(((c.1, b) ↦{fullShare} W b) ∗ held c (S.erase b) W) := by
  unfold held; exact bigSep_erase hb

omit [FloatOps F] [Named F] in
theorem held_put (c : Thread nD τ) (S : Finset (DevRef τ sig)) (W : Valuation τ sig (Elt F)) (b : DevRef τ sig) (hb : b ∈ S) (f : b.ty.Contents (Elt F)) :
    (iprop(((c.1, b) ↦{fullShare} f) ∗ held c (S.erase b) W) : sProp 𝕄) = held c S (Function.update W b f) := by
  rw [held_take c S (Function.update W b f) b hb, Function.update_self, held_update c _ W b f (Finset.notMem_erase b S)]

/-! ## What @main leaves -/

variable [∀ e, Nonempty (Elt F e)]

/-- The transposed embeddings, and the biases as rows: what the transpose and the two reshapes of @main leave. -/
def a0 (d : Dev nD) : Buf (Elt F) ((TT d).loc main_v0) :=
  transpose S64x1000000 [1, 0] (m ((TT d).loc main_arg1)) Shapes1.Facts₀.transposes_S1000000x64_S64x1000000_1_0
def b1r (d : Dev nD) : Buf (Elt F) ((TT d).loc main_v6) := shapeCast S1x256 (m ((TT d).loc main_arg3)) Shapes2.Facts₀.shapeCasts_S256_S1x256
def b2r (d : Dev nD) : Buf (Elt F) ((TT d).loc main_v7) := shapeCast S1x50 (m ((TT d).loc main_arg5)) Shapes2.Facts₀.shapeCasts_S50_S1x50

/-- The program's result as a function of the launch memory and of what the relaid table holds. -/
def OUT (d : Dev nD) (tab : FVec F Spec.STab .f32) : Buf (Elt F) ((TT d).loc main_v8) :=
  Ffnn.out (Ffnn.k50 (F := F)) (Spec.bagSums (flatM m d) tab) (m ((TT d).loc main_arg2)) (b1r m d) (m ((TT d).loc main_arg4)) (b2r m d)

/-- The TensorCore's debt component of its handshake state. -/
abbrev owesB (d : Dev nD) (O : CellTallies nD τ sig (HIx 1)) (b : ℕ) : sProp 𝕄 :=
  iprop(∃ W, ⌜(K (F := F)).WBelow (TT d) W b⌝ ∗ owes (TT d) O W)

/-- The two TensorCore regions as the pipeline kit certifies them, with their entry and exit states spelt over @main's arrays. -/
structure Regions where
  rd0 : (p : Fin 2) → (c : Dev nD) → Pipeline.RDat τ (Elt F) (HIx 1) ℕ UU ℕ (Pipeline.pin (pcfgs (F := F)) adm p) c
  R0 : Pipeline.RDat.RegionSeg (pcfgs (F := F)) adm rd0 (none : HIx 1) defs₀ 𝒱₀ (K (F := F)).L (K (F := F)).lev 0
  pre0 : ∀ d, iprop(((TT d).loc main_v0 ↦{fullShare} a0 m d) ∗ ((TT d).loc main_v1 ↦{fullShare} m ((TT d).loc main_v1))
      ∗ owesB d ((K (F := F)).Otc d 0) 0) ⊢ R0.pre d
  post0 : ∀ d, R0.post d ⊢ iprop(((TT d).loc main_v0 ↦{fullShare} a0 m d)
      ∗ (∃ f : Buf (Elt F) ((TT d).loc main_v1), ((TT d).loc main_v1 ↦{fullShare} f) ∗ ⌜PK (shapeCast S507904x128 f Shapes2.Facts₀.shapeCasts_S31x256x64x128_S507904x128)⌝)
      ∗ owesB d ((K (F := F)).Otc d 0) 0)
  rd1 : FVec F Spec.STab .f32 → (p : Fin 2) → (c : Dev nD) → Pipeline.RDat τ (Elt F) (HIx 1) ℕ UU ℕ (Pipeline.pin (pcfgs (F := F)) adm p) c
  R1 : ∀ tab, Pipeline.RDat.RegionSeg (pcfgs (F := F)) adm (rd1 tab) (none : HIx 1) defs₀ 𝒱₀ (K (F := F)).L (K (F := F)).lev 1
  pre1 : ∀ tab d, iprop(((TT d).loc main_v5 ↦{fullShare} (Spec.bagSums (flatM m d) tab : Buf (Elt F) ((TT d).loc main_v5)))
      ∗ ((TT d).loc main_arg2 ↦{fullShare} m ((TT d).loc main_arg2)) ∗ ((TT d).loc main_v6 ↦{fullShare} b1r m d)
      ∗ ((TT d).loc main_arg4 ↦{fullShare} m ((TT d).loc main_arg4)) ∗ ((TT d).loc main_v7 ↦{fullShare} b2r m d)
      ∗ ((TT d).loc main_v8 ↦{fullShare} m ((TT d).loc main_v8)) ∗ owesB d (0 : CellTallies nD τ sig (HIx 1)) 8) ⊢ (R1 tab).pre d
  post1 : ∀ tab d, (R1 tab).post d ⊢ iprop(((TT d).loc main_v5 ↦{fullShare} (Spec.bagSums (flatM m d) tab : Buf (Elt F) ((TT d).loc main_v5)))
      ∗ ((TT d).loc main_arg2 ↦{fullShare} m ((TT d).loc main_arg2)) ∗ ((TT d).loc main_v6 ↦{fullShare} b1r m d)
      ∗ ((TT d).loc main_arg4 ↦{fullShare} m ((TT d).loc main_arg4)) ∗ ((TT d).loc main_v7 ↦{fullShare} b2r m d)
      ∗ ((TT d).loc main_v8 ↦{fullShare} OUT m d tab) ∗ owesB d (0 : CellTallies nD τ sig (HIx 1)) 8)

/-- What @main leaves the claim on device `d`: the six arguments at their launch contents, the result at `OUT` of a table
    of which `PK` holds. -/
def FIN (d : Dev nD) : sProp 𝕄 :=
  iprop(((TT d).loc main_arg0 ↦{fullShare} m ((TT d).loc main_arg0)) ∗ ((TT d).loc main_arg1 ↦{fullShare} m ((TT d).loc main_arg1))
    ∗ ((TT d).loc main_arg2 ↦{fullShare} m ((TT d).loc main_arg2)) ∗ ((TT d).loc main_arg3 ↦{fullShare} m ((TT d).loc main_arg3))
    ∗ ((TT d).loc main_arg4 ↦{fullShare} m ((TT d).loc main_arg4)) ∗ ((TT d).loc main_arg5 ↦{fullShare} m ((TT d).loc main_arg5))
    ∗ ∃ tab : FVec F Spec.STab .f32, ⌜PK tab⌝ ∗ ((TT d).loc main_v8 ↦{fullShare} OUT m d tab))

/-! ## The valuations along @main -/

section Vals
variable (d : Dev nD)

/-- After the transpose. -/
def V1 : Valuation τ sig (Elt F) := (o1 (F := F)).result (V0 m d)
/-- After the relaying region left `f1` in main_v1, and the five operations up to the flat index array. -/
def V6 (f1 : Buf (Elt F) ((TT d).loc main_v1)) : Valuation τ sig (Elt F) :=
  StableHlo.after [o2, o3, o4, o5, o6] (Function.update (V1 m d) (rr main_v1) f1)
/-- After the SparseCore call left `s` in main_v5, and the two reshapes of the biases. -/
def V8 (f1 : Buf (Elt F) ((TT d).loc main_v1)) (s : Buf (Elt F) ((TT d).loc main_v5)) : Valuation τ sig (Elt F) :=
  StableHlo.after [o7, o8] (Function.update (V6 m d f1) (rr main_v5) s)

theorem V1_v0 : (o1 (F := F)).result (V0 m d) (rr main_v0) = a0 m d := by
  unfold a0; rw [StableHlo.unary_result]; rfl
theorem V1_v1 : (o1 (F := F)).result (V0 m d) (rr main_v1) = m ((TT d).loc main_v1) := by
  rw [StableHlo.unary_result_ne (h := by decide)]; rfl

/-- The valuation when the relaying region has left `f1` in main_v1. -/
def W1 (f1 : Buf (Elt F) ((TT d).loc main_v1)) : Valuation τ sig (Elt F) := Function.update ((o1 (F := F)).result (V0 m d)) (rr main_v1) f1
/-- After the five operations up to the flat index array. -/
def W6 (f1 : Buf (Elt F) ((TT d).loc main_v1)) : Valuation τ sig (Elt F) :=
  StableHlo.after [o2 (F := F), o3, o4, o5, o6] (W1 m d f1)

theorem W6_def (f1 : Buf (Elt F) ((TT d).loc main_v1)) :
    (o6 (F := F)).result ((o5 (F := F)).result ((o4 (F := F)).result ((o3 (F := F)).result ((o2 (F := F)).result (W1 m d f1))))) = W6 m d f1 := rfl

theorem W1_v0 (f1 : Buf (Elt F) ((TT d).loc main_v1)) : W1 m d f1 (rr main_v0) = a0 m d := by
  unfold W1; rw [Function.update_of_ne (by decide)]; exact V1_v0 m d

theorem W6_v4 (hfl : ∀ idx : IVec S4096x50 32,
      shapeCast S262144 (pad S4096x64 ![0, 0] ![0, 14] ![0, 0] idx (id (constantI S_ 32 0#32)) Shapes2.Facts₀.pads_S4096x50_S4096x64_000_0140 Shapes2.Facts₀.h_S_)
        Shapes2.Facts₀.shapeCasts_S4096x64_S262144 = Spec.flatOf idx)
    (f1 : Buf (Elt F) ((TT d).loc main_v1)) : W6 m d f1 (rr main_v4) = flatM m d := by
  unfold W6 flatM
  rw [← hfl]
  after_results
  unfold W1
  rw [Function.update_of_ne (by decide), StableHlo.unary_result_ne (h := by decide)]
  rfl

theorem W6_v2 (f1 : Buf (Elt F) ((TT d).loc main_v1)) :
    W6 m d f1 (rr main_v2) = shapeCast S507904x128 f1 Shapes2.Facts₀.shapeCasts_S31x256x64x128_S507904x128 := by
  unfold W6
  after_results
  unfold W1
  rw [Function.update_self]
  rfl

theorem W6_v5 (f1 : Buf (Elt F) ((TT d).loc main_v1)) : W6 m d f1 (rr main_v5) = m ((TT d).loc main_v5) := by
  unfold W6
  after_results
  unfold W1
  rw [Function.update_of_ne (by decide), StableHlo.unary_result_ne (h := by decide)]
  rfl

/-- After the SparseCore call has left the bag sums of the table `tab` in main_v5. -/
def W7 (f1 : Buf (Elt F) ((TT d).loc main_v1)) (s : Buf (Elt F) ((TT d).loc main_v5)) : Valuation τ sig (Elt F) :=
  Function.update (W6 m d f1) (rr main_v5) s

theorem W7_v2 (f1 : Buf (Elt F) ((TT d).loc main_v1)) (s : Buf (Elt F) ((TT d).loc main_v5)) :
    W7 m d f1 s (rr main_v2) = shapeCast S507904x128 f1 Shapes2.Facts₀.shapeCasts_S31x256x64x128_S507904x128 := by
  unfold W7; rw [Function.update_of_ne (by decide)]; exact W6_v2 m d f1
theorem W7_v4 (hfl : ∀ idx : IVec S4096x50 32,
      shapeCast S262144 (pad S4096x64 ![0, 0] ![0, 14] ![0, 0] idx (id (constantI S_ 32 0#32)) Shapes2.Facts₀.pads_S4096x50_S4096x64_000_0140 Shapes2.Facts₀.h_S_)
        Shapes2.Facts₀.shapeCasts_S4096x64_S262144 = Spec.flatOf idx)
    (f1 : Buf (Elt F) ((TT d).loc main_v1)) (s : Buf (Elt F) ((TT d).loc main_v5)) : W7 m d f1 s (rr main_v4) = flatM m d := by
  unfold W7; rw [Function.update_of_ne (by decide)]; exact W6_v4 m d hfl f1

/-- After the two reshapes of the biases. -/
def W9 (f1 : Buf (Elt F) ((TT d).loc main_v1)) (s : Buf (Elt F) ((TT d).loc main_v5)) : Valuation τ sig (Elt F) :=
  StableHlo.after [o7 (F := F), o8] (W7 m d f1 s)
theorem W9_def (f1 : Buf (Elt F) ((TT d).loc main_v1)) (s : Buf (Elt F) ((TT d).loc main_v5)) :
    (o8 (F := F)).result ((o7 (F := F)).result (W7 m d f1 s)) = W9 m d f1 s := rfl

section W9
variable (f1 : Buf (Elt F) ((TT d).loc main_v1)) (s : Buf (Elt F) ((TT d).loc main_v5))

theorem W9_v5 : W9 m d f1 s (rr main_v5) = s := by
  unfold W9; after_results; unfold W7; rw [Function.update_self]
theorem W9_v6 : W9 m d f1 s (rr main_v6) = b1r m d := by
  unfold W9 b1r; after_results; unfold W7 W6 W1
  rw [Function.update_of_ne (by decide)]; after_results
  rw [Function.update_of_ne (by decide), StableHlo.unary_result_ne (h := by decide)]; rfl
theorem W9_v7 : W9 m d f1 s (rr main_v7) = b2r m d := by
  unfold W9 b2r; after_results; unfold W7 W6 W1
  rw [Function.update_of_ne (by decide)]; after_results
  rw [Function.update_of_ne (by decide), StableHlo.unary_result_ne (h := by decide)]; rfl
/-- A buffer no operation of @main writes and neither region nor the SparseCore call changes keeps its launch contents. -/
theorem W9_keep (b : Ref sig .tc) (h0 : b ≠ main_v0) (h1 : b ≠ main_v1) (h2 : b ≠ main_v2) (hc : b ≠ main_c) (hc0 : b ≠ main_call0_v0)
    (h3 : b ≠ main_v3) (h4 : b ≠ main_v4) (h5 : b ≠ main_v5) (h6 : b ≠ main_v6) (h7 : b ≠ main_v7) :
    W9 m d f1 s (rr b) = m ((TT d).loc b) := by
  unfold W9
  simp only [StableHlo.after_cons, StableHlo.after_nil]
  rw [StableHlo.reshape_result_ne (h := h7), StableHlo.reshape_result_ne (h := h6)]
  unfold W7
  rw [Function.update_of_ne (fun e => h5 (Proc.devRef_injective _ e))]
  unfold W6
  simp only [StableHlo.after_cons, StableHlo.after_nil]
  rw [StableHlo.reshape_result_ne (h := h4), StableHlo.binary_result_ne (h := h3), StableHlo.unary_result_ne (h := hc0),
    StableHlo.nullary_result_ne (h := hc), StableHlo.reshape_result_ne (h := h2)]
  unfold W1
  rw [Function.update_of_ne (fun e => h1 (Proc.devRef_injective _ e)), StableHlo.unary_result_ne (h := h0)]
  rfl

end W9

end Vals

/-! ## @main -/

omit [FloatOps F] [Named F] [∀ e, Nonempty (Elt F e)] in
theorem G_eq (d : Dev nD) : (G (F := F) d : sProp 𝕄)
    = iprop((Pipeline.cellsGhost (Pipeline.pin (pcfgs (F := F)) adm) EP 0 d ∗ Pipeline.cellsGhost (Pipeline.pin (pcfgs (F := F)) adm) EP 1 d)
      ∗ (Pipeline.toksInit (Pipeline.pin (pcfgs (F := F)) adm) EP 0 d ∗ Pipeline.toksInit (Pipeline.pin (pcfgs (F := F)) adm) EP 1 d)) := by
  unfold G; rw [bigSep_W0, bigSep_W0]

/-- @main on device `d`'s TensorCore. -/
theorem hmain (Rg : Regions m PK) (hfl : ∀ idx : IVec S4096x50 32,
      shapeCast S262144 (pad S4096x64 ![0, 0] ![0, 14] ![0, 0] idx (id (constantI S_ 32 0#32)) Shapes2.Facts₀.pads_S4096x50_S4096x64_000_0140 Shapes2.Facts₀.h_S_)
        Shapes2.Facts₀.shapeCasts_S4096x64_S262144 = Spec.flatOf idx)
    (κ : GSem nD τ sig → ℕ) (d : Dev nD) :
    iprop((K (F := F)).ctx EH (P m PK) κ ∗ (K (F := F)).tcSt EH d 0 ∗ (K (F := F)).tcRes m ρ d ∗ G (F := F) d)
      ⊢ wp frame (wpE ((K (F := F)).defs (D (F := F))) 𝒱 (TT d) none) Set.univ (main d)
          fun _ => iprop((K (F := F)).tcSt EH d 1 ∗ FIN m PK d) := by
  unfold SparseCore.Cfg.tcRes SparseCore.Cfg.tcSt
  rw [(K (F := F)).Otc_end d (le_refl 1)]
  rw [show (fun b : Ref sig .tc => m ((TT d).loc b)) = (fun b => V0 m d (rr b)) from rfl, unscoped_held, G_eq]
  simp only [main, fn_pad.body, wp_bind, wp_pure]
  iintro ⟨#Hctx, ⟨HO, Hst⟩, ⟨Hb, Hheld, -, -⟩, ⟨Hg0, Hg1⟩, ⟨Ht0, Ht1⟩⟩
  ihave Hlv := (SparseCore.Cfg.ctx_levAts κ) $$ Hctx
  -- the transpose
  iapply (wp_hlo_within 𝒱 (TT d) none Set.univ (op := o1) (S := Sall) h1 (V := V0 m d)) $$ [Hb Hheld]
  · isplitl [Hb]; · iexact Hb
    iexact Hheld
  iintro ⟨Hb, Hheld⟩
  rw [wp_ret]; imodintro
  -- region 0: main_v0 and main_v1 leave the held set, the debt leaves the handshake state
  ihave Hh := (Entails.of_eq (held_take (TT d) Sall ((o1 (F := F)).result (V0 m d)) (rr main_v0) (by decide))) $$ Hheld
  icases Hh with ⟨Hv0, Hheld⟩
  ihave Hh := (Entails.of_eq (held_take (TT d) (Sall.erase (rr main_v0)) ((o1 (F := F)).result (V0 m d)) (rr main_v1) (by decide))) $$ Hheld
  icases Hh with ⟨Hv1, Hheld⟩
  rw [V1_v0 m d, V1_v1 m d]
  iapply (wp_region Rg.rd0 Rg.R0 d _) $$ [Hb Hv0 Hv1 HO Hg0 Ht0 Hheld Hst Hg1 Ht1]
  isplitr [Hb Hv0 Hv1 HO Hg0 Ht0]
  · iintro ⟨Hb, Hpost⟩
    ihave Hp := (Rg.post0 d) $$ Hpost
    icases Hp with ⟨Hv0, ⟨%f1, Hv1, %hPK⟩, HO⟩
    ihave Hheld := (Entails.of_eq (held_put (TT d) (Sall.erase (rr main_v0)) ((o1 (F := F)).result (V0 m d)) (rr main_v1) (by decide) f1)) $$ [Hv1 Hheld]
    · isplitl [Hv1] <;> iassumption
    ihave Hheld := (Entails.of_eq (show (held (TT d) (Sall.erase (rr main_v0)) (Function.update ((o1 (F := F)).result (V0 m d)) (rr main_v1) f1) : sProp 𝕄)
        = held (TT d) (Sall.erase (rr main_v0)) (W1 m d f1) from rfl)) $$ Hheld
    ihave Hheld := (Entails.of_eq (held_take (TT d) Sall (W1 m d f1) (rr main_v0) (by decide)).symm) $$ [Hv0 Hheld]
    · rw [W1_v0]; isplitl [Hv0] <;> iassumption
    -- the reshape of the relaid table, the constant, the pad's two operations, the flattening
    iapply (wp_hlo_within 𝒱 (TT d) none Set.univ (op := o2) (S := Sall) h2 (V := W1 m d f1)) $$ [Hb Hheld]
    · isplitl [Hb]; · iexact Hb
      iexact Hheld
    iintro ⟨Hb, Hheld⟩
    rw [wp_ret]; imodintro
    iapply (wp_hlo_within 𝒱 (TT d) none Set.univ (op := o3) (S := Sall) h3) $$ [Hb Hheld]
    · isplitl [Hb]; · iexact Hb
      iexact Hheld
    iintro ⟨Hb, Hheld⟩
    rw [wp_ret]; imodintro
    iapply (wp_hlo_within 𝒱 (TT d) none Set.univ (op := o4) (S := Sall) h4) $$ [Hb Hheld]
    · isplitl [Hb]; · iexact Hb
      iexact Hheld
    iintro ⟨Hb, Hheld⟩
    rw [wp_ret]; imodintro
    iapply (wp_hlo_within 𝒱 (TT d) none Set.univ (op := o5) (S := Sall) h5) $$ [Hb Hheld]
    · isplitl [Hb]; · iexact Hb
      iexact Hheld
    iintro ⟨Hb, Hheld⟩
    rw [wp_ret]; imodintro
    imodintro
    iapply (wp_hlo_within 𝒱 (TT d) none Set.univ (op := o6) (S := Sall) h6) $$ [Hb Hheld]
    · isplitl [Hb]; · iexact Hb
      iexact Hheld
    iintro ⟨Hb, Hheld⟩
    rw [wp_ret]; imodintro
    rw [W6_def]
    -- the SparseCore call: the flat index array, the table and the sums leave the held set
    ihave Hh := (Entails.of_eq (held_take (TT d) Sall (W6 m d f1) (rr main_v4) (by decide))) $$ Hheld
    icases Hh with ⟨Hi, Hheld⟩
    ihave Hh := (Entails.of_eq (held_take (TT d) (Sall.erase (rr main_v4)) (W6 m d f1) (rr main_v2) (by decide))) $$ Hheld
    icases Hh with ⟨Ht, Hheld⟩
    ihave Hh := (Entails.of_eq (held_take (TT d) ((Sall.erase (rr main_v4)).erase (rr main_v2)) (W6 m d f1) (rr main_v5) (by decide))) $$ Hheld
    icases Hh with ⟨Ho, Hheld⟩
    rw [W6_v4 m d hfl f1, W6_v2 m d f1, W6_v5 m d f1]
    ihave Hst0 := (st0_intro m PK d (shapeCast S507904x128 f1 Shapes2.Facts₀.shapeCasts_S31x256x64x128_S507904x128) (m ((TT d).loc main_v5)) hPK) $$ [Hi Ht Ho]
    · isplitl [Hi]; · iexact Hi
      isplitl [Ht] <;> iassumption
    icases Hst0 with ⟨Hrem, Hsts⟩
    iapply ((K (F := F)).wp_run (D (F := F)) 𝒱 (EH := EH) (P := P m PK) κ d 0) $$ [Hsts HO Hst Hrem Hb Hheld Hg1 Ht1]
    isplitr; · iexact Hctx
    isplitl [HO Hst]
    · unfold SparseCore.Cfg.tcSt
      isplitl [HO]; · iexact HO
      iexact Hst
    isplitl [Hsts]; · iexact Hsts
    iintro ⟨Hst, Hdn⟩
    ihave Hd := (dn0_elim m PK d (shapeCast S507904x128 f1 Shapes2.Facts₀.shapeCasts_S31x256x64x128_S507904x128)) $$ [Hrem Hdn]
    · isplitl [Hrem] <;> iassumption
    icases Hd with ⟨Hi, Ht, Ho⟩
    -- back into the held set
    ihave Hheld := (Entails.of_eq (held_put (TT d) ((Sall.erase (rr main_v4)).erase (rr main_v2)) (W6 m d f1) (rr main_v5) (by decide)
        (Spec.bagSums (flatM m d) (shapeCast S507904x128 f1 Shapes2.Facts₀.shapeCasts_S31x256x64x128_S507904x128)))) $$ [Ho Hheld]
    · isplitl [Ho]; · iexact Ho
      iexact Hheld
    ihave Hheld := (Entails.of_eq (held_take (TT d) (Sall.erase (rr main_v4)) (W7 m d f1 (Spec.bagSums (flatM m d) (shapeCast S507904x128 f1 Shapes2.Facts₀.shapeCasts_S31x256x64x128_S507904x128))) (rr main_v2) (by decide)).symm) $$ [Ht Hheld]
    · rw [W7_v2]; isplitl [Ht]; · iexact Ht
      iexact Hheld
    ihave Hheld := (Entails.of_eq (held_take (TT d) Sall (W7 m d f1 (Spec.bagSums (flatM m d) (shapeCast S507904x128 f1 Shapes2.Facts₀.shapeCasts_S31x256x64x128_S507904x128))) (rr main_v4) (by decide)).symm) $$ [Hi Hheld]
    · rw [W7_v4 m d hfl]; isplitl [Hi]; · iexact Hi
      iexact Hheld
    -- the two reshapes of the biases
    iapply (wp_hlo_within 𝒱 (TT d) none Set.univ (op := o7) (S := Sall) h7) $$ [Hb Hheld]
    · isplitl [Hb]; · iexact Hb
      iexact Hheld
    iintro ⟨Hb, Hheld⟩
    rw [wp_ret]; imodintro
    iapply (wp_hlo_within 𝒱 (TT d) none Set.univ (op := o8) (S := Sall) h8) $$ [Hb Hheld]
    · isplitl [Hb]; · iexact Hb
      iexact Hheld
    iintro ⟨Hb, Hheld⟩
    rw [wp_ret]; imodintro
    rw [W9_def]
    -- region 1: its six arrays leave the held set, the debt (none after the only SparseCore call) leaves the handshake state
    ihave Hh := (Entails.of_eq (held_take (TT d) Sall (W9 m d f1 (Spec.bagSums (flatM m d) (shapeCast S507904x128 f1 Shapes2.Facts₀.shapeCasts_S31x256x64x128_S507904x128))) (rr main_v5) (by decide))) $$ Hheld
    icases Hh with ⟨H_main_v5, Hheld⟩
    ihave Hh := (Entails.of_eq (held_take (TT d) (Sall.erase (rr main_v5)) (W9 m d f1 (Spec.bagSums (flatM m d) (shapeCast S507904x128 f1 Shapes2.Facts₀.shapeCasts_S31x256x64x128_S507904x128))) (rr main_arg2) (by decide))) $$ Hheld
    icases Hh with ⟨H_main_arg2, Hheld⟩
    ihave Hh := (Entails.of_eq (held_take (TT d) ((Sall.erase (rr main_v5)).erase (rr main_arg2)) (W9 m d f1 (Spec.bagSums (flatM m d) (shapeCast S507904x128 f1 Shapes2.Facts₀.shapeCasts_S31x256x64x128_S507904x128))) (rr main_v6) (by decide))) $$ Hheld
    icases Hh with ⟨H_main_v6, Hheld⟩
    ihave Hh := (Entails.of_eq (held_take (TT d) (((Sall.erase (rr main_v5)).erase (rr main_arg2)).erase (rr main_v6)) (W9 m d f1 (Spec.bagSums (flatM m d) (shapeCast S507904x128 f1 Shapes2.Facts₀.shapeCasts_S31x256x64x128_S507904x128))) (rr main_arg4) (by decide))) $$ Hheld
    icases Hh with ⟨H_main_arg4, Hheld⟩
    ihave Hh := (Entails.of_eq (held_take (TT d) ((((Sall.erase (rr main_v5)).erase (rr main_arg2)).erase (rr main_v6)).erase (rr main_arg4)) (W9 m d f1 (Spec.bagSums (flatM m d) (shapeCast S507904x128 f1 Shapes2.Facts₀.shapeCasts_S31x256x64x128_S507904x128))) (rr main_v7) (by decide))) $$ Hheld
    icases Hh with ⟨H_main_v7, Hheld⟩
    ihave Hh := (Entails.of_eq (held_take (TT d) (((((Sall.erase (rr main_v5)).erase (rr main_arg2)).erase (rr main_v6)).erase (rr main_arg4)).erase (rr main_v7)) (W9 m d f1 (Spec.bagSums (flatM m d) (shapeCast S507904x128 f1 Shapes2.Facts₀.shapeCasts_S31x256x64x128_S507904x128))) (rr main_v8) (by decide))) $$ Hheld
    icases Hh with ⟨H_main_v8, Hheld⟩
    rw [W9_v5, W9_v6, W9_v7, W9_keep m d f1 _ main_arg2 (by decide) (by decide) (by decide) (by decide) (by decide) (by decide) (by decide) (by decide) (by decide) (by decide), W9_keep m d f1 _ main_arg4 (by decide) (by decide) (by decide) (by decide) (by decide) (by decide) (by decide) (by decide) (by decide) (by decide),
      W9_keep m d f1 _ main_v8 (by decide) (by decide) (by decide) (by decide) (by decide) (by decide) (by decide) (by decide) (by decide) (by decide)]
    unfold SparseCore.Cfg.tcSt
    icases Hst with ⟨HO, Hst⟩
    rw [(K (F := F)).Otc_end d (show 1 ≤ ((0 : Fin 1).val + 1) from le_rfl)]
    iapply (wp_region (Rg.rd1 (shapeCast S507904x128 f1 Shapes2.Facts₀.shapeCasts_S31x256x64x128_S507904x128)) (Rg.R1 (shapeCast S507904x128 f1 Shapes2.Facts₀.shapeCasts_S31x256x64x128_S507904x128)) d _) $$ [Hb H_main_v5 H_main_arg2 H_main_v6 H_main_arg4 H_main_v7 H_main_v8 HO Hg1 Ht1 Hheld Hst]
    isplitr [Hb H_main_v5 H_main_arg2 H_main_v6 H_main_arg4 H_main_v7 H_main_v8 HO Hg1 Ht1]
    · iintro ⟨Hb, Hpost⟩
      ihave Hp := (Rg.post1 (shapeCast S507904x128 f1 Shapes2.Facts₀.shapeCasts_S31x256x64x128_S507904x128) d) $$ Hpost
      icases Hp with ⟨H_main_v5, H_main_arg2, H_main_v6, H_main_arg4, H_main_v7, H_main_v8, HO⟩
      -- what @main leaves the claim
      ihave Hh := (Entails.of_eq (held_take (TT d) ((((((Sall.erase (rr main_v5)).erase (rr main_arg2)).erase (rr main_v6)).erase (rr main_arg4)).erase (rr main_v7)).erase (rr main_v8)) (W9 m d f1 (Spec.bagSums (flatM m d) (shapeCast S507904x128 f1 Shapes2.Facts₀.shapeCasts_S31x256x64x128_S507904x128))) (rr main_arg0) (by decide))) $$ Hheld
      icases Hh with ⟨H_main_arg0, Hheld⟩
      ihave Hh := (Entails.of_eq (held_take (TT d) (((((((Sall.erase (rr main_v5)).erase (rr main_arg2)).erase (rr main_v6)).erase (rr main_arg4)).erase (rr main_v7)).erase (rr main_v8)).erase (rr main_arg0)) (W9 m d f1 (Spec.bagSums (flatM m d) (shapeCast S507904x128 f1 Shapes2.Facts₀.shapeCasts_S31x256x64x128_S507904x128))) (rr main_arg1) (by decide))) $$ Hheld
      icases Hh with ⟨H_main_arg1, Hheld⟩
      ihave Hh := (Entails.of_eq (held_take (TT d) ((((((((Sall.erase (rr main_v5)).erase (rr main_arg2)).erase (rr main_v6)).erase (rr main_arg4)).erase (rr main_v7)).erase (rr main_v8)).erase (rr main_arg0)).erase (rr main_arg1)) (W9 m d f1 (Spec.bagSums (flatM m d) (shapeCast S507904x128 f1 Shapes2.Facts₀.shapeCasts_S31x256x64x128_S507904x128))) (rr main_arg3) (by decide))) $$ Hheld
      icases Hh with ⟨H_main_arg3, Hheld⟩
      ihave Hh := (Entails.of_eq (held_take (TT d) (((((((((Sall.erase (rr main_v5)).erase (rr main_arg2)).erase (rr main_v6)).erase (rr main_arg4)).erase (rr main_v7)).erase (rr main_v8)).erase (rr main_arg0)).erase (rr main_arg1)).erase (rr main_arg3)) (W9 m d f1 (Spec.bagSums (flatM m d) (shapeCast S507904x128 f1 Shapes2.Facts₀.shapeCasts_S31x256x64x128_S507904x128))) (rr main_arg5) (by decide))) $$ Hheld
      icases Hh with ⟨H_main_arg5, Hheld⟩
      rw [W9_keep m d f1 _ main_arg0 (by decide) (by decide) (by decide) (by decide) (by decide) (by decide) (by decide) (by decide) (by decide) (by decide), W9_keep m d f1 _ main_arg1 (by decide) (by decide) (by decide) (by decide) (by decide) (by decide) (by decide) (by decide) (by decide) (by decide), W9_keep m d f1 _ main_arg3 (by decide) (by decide) (by decide) (by decide) (by decide) (by decide) (by decide) (by decide) (by decide) (by decide),
        W9_keep m d f1 _ main_arg5 (by decide) (by decide) (by decide) (by decide) (by decide) (by decide) (by decide) (by decide) (by decide) (by decide)]
      imodintro
      isplitl [HO Hst]
      · isplitl [HO]; · iexact HO
        iexact Hst
      unfold FIN
      isplitl [H_main_arg0]; · iexact H_main_arg0
      isplitl [H_main_arg1]; · iexact H_main_arg1
      isplitl [H_main_arg2]; · iexact H_main_arg2
      isplitl [H_main_arg3]; · iexact H_main_arg3
      isplitl [H_main_arg4]; · iexact H_main_arg4
      isplitl [H_main_arg5]; · iexact H_main_arg5
      iexists (shapeCast S507904x128 f1 Shapes2.Facts₀.shapeCasts_S31x256x64x128_S507904x128)
      isplitr; · ipureintro; exact hPK
      iexact H_main_v8
    isplitl [Hb]; · iexact Hb
    isplitl [H_main_v5 H_main_arg2 H_main_v6 H_main_arg4 H_main_v7 H_main_v8 HO]
    · iapply (Rg.pre1 (shapeCast S507904x128 f1 Shapes2.Facts₀.shapeCasts_S31x256x64x128_S507904x128) d)
      isplitl [H_main_v5]; · iexact H_main_v5
      isplitl [H_main_arg2]; · iexact H_main_arg2
      isplitl [H_main_v6]; · iexact H_main_v6
      isplitl [H_main_arg4]; · iexact H_main_arg4
      isplitl [H_main_v7]; · iexact H_main_v7
      isplitl [H_main_v8]; · iexact H_main_v8
      iexact HO
    isplitr; · iexact Hlv
    isplitl [Hg1] <;> iassumption
  isplitl [Hb]; · iexact Hb
  isplitl [Hv0 Hv1 HO]
  · iapply (Rg.pre0 d)
    isplitl [Hv0]; · iexact Hv0
    isplitl [Hv1]; · iexact Hv1
    iexact HO
  isplitr; · iexact Hlv
  isplitl [Hg0] <;> iassumption

/-! ## What the TensorCores' final assertions say of the final memory -/

/-- Device `d`'s part of the claim read off a final state: the six arguments unchanged, the result at `OUT` of a table of
    which `PK` holds. -/
def fq (d : Dev nD) (s' : Phys nD τ sig (Elt F)) : Prop :=
  (s'.mem.mem ((TT d).loc main_arg0) = m ((TT d).loc main_arg0) ∧ s'.mem.mem ((TT d).loc main_arg1) = m ((TT d).loc main_arg1)
    ∧ s'.mem.mem ((TT d).loc main_arg2) = m ((TT d).loc main_arg2) ∧ s'.mem.mem ((TT d).loc main_arg3) = m ((TT d).loc main_arg3)
    ∧ s'.mem.mem ((TT d).loc main_arg4) = m ((TT d).loc main_arg4) ∧ s'.mem.mem ((TT d).loc main_arg5) = m ((TT d).loc main_arg5))
  ∧ ∃ tab : FVec F Spec.STab .f32, PK tab ∧ s'.mem.mem ((TT d).loc main_v8) = OUT m d tab

theorem hfin (d : Dev nD) (s' : Phys nD τ sig (Elt F)) : iprop(FIN m PK d ∗ SI s') ⊢ (⌜fq m PK d s'⌝ : sProp 𝕄) := by
  unfold FIN
  iintro ⟨⟨H0, H1, H2, H3, H4, H5, %tab, %hP, H8⟩, HSI⟩
  ihave H := (persistent_entails_right (SI_pointsTo_agree (st := s') (ℓ := (TT d).loc main_arg0) (I := Finset.univ) (q := fullShare) (f := m ((TT d).loc main_arg0)))) $$ [HSI H0]
  · isplitl [HSI] <;> iassumption
  icases H with ⟨%h0, HSI, -⟩
  ihave H := (persistent_entails_right (SI_pointsTo_agree (st := s') (ℓ := (TT d).loc main_arg1) (I := Finset.univ) (q := fullShare) (f := m ((TT d).loc main_arg1)))) $$ [HSI H1]
  · isplitl [HSI] <;> iassumption
  icases H with ⟨%h1, HSI, -⟩
  ihave H := (persistent_entails_right (SI_pointsTo_agree (st := s') (ℓ := (TT d).loc main_arg2) (I := Finset.univ) (q := fullShare) (f := m ((TT d).loc main_arg2)))) $$ [HSI H2]
  · isplitl [HSI] <;> iassumption
  icases H with ⟨%h2, HSI, -⟩
  ihave H := (persistent_entails_right (SI_pointsTo_agree (st := s') (ℓ := (TT d).loc main_arg3) (I := Finset.univ) (q := fullShare) (f := m ((TT d).loc main_arg3)))) $$ [HSI H3]
  · isplitl [HSI] <;> iassumption
  icases H with ⟨%h3, HSI, -⟩
  ihave H := (persistent_entails_right (SI_pointsTo_agree (st := s') (ℓ := (TT d).loc main_arg4) (I := Finset.univ) (q := fullShare) (f := m ((TT d).loc main_arg4)))) $$ [HSI H4]
  · isplitl [HSI] <;> iassumption
  icases H with ⟨%h4, HSI, -⟩
  ihave H := (persistent_entails_right (SI_pointsTo_agree (st := s') (ℓ := (TT d).loc main_arg5) (I := Finset.univ) (q := fullShare) (f := m ((TT d).loc main_arg5)))) $$ [HSI H5]
  · isplitl [HSI] <;> iassumption
  icases H with ⟨%h5, HSI, -⟩
  ihave H := (SI_pointsTo_agree (st := s') (ℓ := (TT d).loc main_v8) (I := Finset.univ) (q := fullShare) (f := OUT m d tab)) $$ [HSI H8]
  · isplitl [HSI] <;> iassumption
  icases H with %h8
  ipureintro
  exact ⟨⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i)⟩,
    tab, hP, funext fun i => h8 i (Finset.mem_univ i)⟩

/-! ## The program's run -/

/-- What every final state satisfies: on each device the arguments unchanged and the result at `OUT` of a table of which `PK` holds. -/
def QC : PUnit × MemSt nD τ sig (Elt F) → Prop := fun r => ∀ c : Dev nD,
  (r.2.mem ((TT c).loc main_arg0) = m ((TT c).loc main_arg0) ∧ r.2.mem ((TT c).loc main_arg1) = m ((TT c).loc main_arg1)
    ∧ r.2.mem ((TT c).loc main_arg2) = m ((TT c).loc main_arg2) ∧ r.2.mem ((TT c).loc main_arg3) = m ((TT c).loc main_arg3)
    ∧ r.2.mem ((TT c).loc main_arg4) = m ((TT c).loc main_arg4) ∧ r.2.mem ((TT c).loc main_arg5) = m ((TT c).loc main_arg5))
  ∧ ∃ tab : FVec F Spec.STab .f32, PK tab ∧ r.2.mem ((TT c).loc main_v8) = OUT m c tab

/-- The run of the whole program: the launch theorem at one vector-subcore call, from the tile's obligation, the split of a
    SparseCore's operands among its tiles, @main with its two regions, and the launch element. -/
theorem run_main (Rg : Regions m PK) (hfl : ∀ idx : IVec S4096x50 32,
      shapeCast S262144 (pad S4096x64 ![0, 0] ![0, 14] ![0, 0] idx (id (constantI S_ 32 0#32)) Shapes2.Facts₀.pads_S4096x50_S4096x64_000_0140 Shapes2.Facts₀.h_S_)
        Shapes2.Facts₀.shapeCasts_S4096x64_S262144 = Spec.flatOf idx)
    (htile : (K (F := F)).TileObl (D (F := F)) 𝒱 (P m PK) v₀ 0) :
    θ_run (Cert.KernelIdeal.defs (F := F)) (Cert.KernelIdeal.threads (F := F)) ⟨m, fun _ => 0, ρ⟩ (QC m PK) :=
  SparseCore.Cfg.θ_run_sc (K := K (F := F)) (D := D (F := F)) (𝒱 := 𝒱) (EH := EH) (P := P m PK) facts v₀
    (fun q hq => match q with | 0 => nomatch hq)
    (fun q _ => match q with | 0 => htile)
    (fun q _ => match q with | 0 => SparseCore.Cfg.VecSplit.of_plain (vecSplit m PK))
    m ρ main (G (F := F)) (FIN m PK) (u₀ (F := F)) (sep_elim_left.trans (hu₀ m PK)) (hmain m ρ PK Rg hfl) (fq m PK) (hfin m PK) (QC m PK) (fun _ h => h)

end Cert.Proof.Bag

end
-- ==== Proof.PackBody.lean ====
/-
  The kernel body of the packing call, run once at symbolic operands: from the input staging buffer at contents
  `f0` and the output staging buffer at anything, the body (one whole load, the transposing product with the
  identity, 512 stores of 64 x 64 pieces) returns with the input buffer as it was and the output buffer at
  contents that are a term over `f0` alone.
-/
import proofs.«203835_g19404662243951_cont_8to1_399_35_alg».proof.Proof.Gen.KernelIdeal.Skeleton
import Idealize.ShloMosaic.Lib.Tactic

noncomputable section

namespace Cert.Proof.Pack

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What the body leaves in the output staging buffer, a term over the input staging buffer's contents, with the
    proof that the body runs to its return from the two buffers held whole, handing the input back as it was and
    the output at that term. -/
noncomputable def packRun (c : Dev nD) (i : grid0.Coords)
    (M0 : Memref sig .tc .vmem S64x32768 .f32) (h0 : M0.IsWhole) (M1 : Memref sig .tc .vmem S1x256x64x128 .f32) (h1 : M1.IsWhole)
    (f0 : Bf (F := F) c M0) :
    { W : Bf (F := F) c M1 //
      ∀ (f1 : Bf (F := F) c M1) (E : Set Name) (Q : PUnit → sProp 𝕄),
        iprop(pt c M0 f0 ∗ pt c M1 f1 ∗ (iprop(pt c M0 f0 ∗ pt c M1 W) -∗ Q ⟨⟩))
        ⊢ wp frame (wpE (defs₀ (F := F)) Variants.none c none) E (cc0__pack_body i M0 h0 M1 h1) Q } := by
  refine ⟨?_, fun f1 E Q => ?run⟩
  case run =>
    iintro ⟨H0, H1, Hk⟩
    sl_exec_parts!
    sl_step
    iapply Hk
    isplitl [H0]; · iexact H0
    iexact H1

end Cert.Proof.Pack

end
-- ==== Proof.PackData.lean ====
/-
  The proof data of the packing pipeline on one core: the entry contents of its two arrays (the transposed
  embeddings, read block by block; the relaid table, written block by block), what the body may leave in each
  staging buffer — the input's as it found it; the output's at what the body's stores make of SOME fetched input
  block, its columns past the array's end at anything —, the invariant (the scoped buffers no window of this
  pipeline stages), full shares, a constant debt, and the waits recorded so far bounded in level.
-/
import proofs.«203835_g19404662243951_cont_8to1_399_35_alg».proof.Proof.PackBody
import proofs.«203835_g19404662243951_cont_8to1_399_35_alg».proof.Proof.Setup
import proofs.«203835_g19404662243951_cont_8to1_399_35_alg».proof.Proof.Gen.KernelIdeal.Launch
import proofs.«203835_g19404662243951_cont_8to1_399_35_alg».proof.Proof.Gen.KernelIdeal.Points

noncomputable section

namespace Cert.Proof.Pack

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]

local notation "𝕄" => MT nD τ sig (HIx 1) (Elt F) ℕ Bag.UU ℕ

/-- What the input staging buffer holds once the fetch at point `t` has landed in a buffer that held `d`: the
    block of the array inside the array, `d` on the columns past its end. -/
def fetched0 (c : Dev nD) (a0 : Buf (Elt F) ((c : Thread nD τ).loc main_v0)) (t : Fin cfg0.N)
    (d : (cfg0.win 0).block.Idx → Elt F (cfg0.win 0).elt) : (cfg0.win 0).block.Idx → Elt F (cfg0.win 0).elt :=
  (cfg0.win 0).fill (cfg0.grid.coords t) d (((cfg0.win 0).blk t).view.read (Elt F) a0)

/-- What the body may leave in the output staging buffer at point `t`: what its stores make of the input staging
    buffer at some fetched contents, read through some whole staging memrefs. -/
def OutOK (c : Dev nD) (a0 : Buf (Elt F) ((c : Thread nD τ).loc main_v0)) (t : Fin cfg0.N)
    (X : (cfg0.win 1).block.Idx → Elt F (cfg0.win 1).elt) : Prop :=
  ∃ (d : (cfg0.win 0).block.Idx → Elt F (cfg0.win 0).elt)
    (M0 : Memref sig .tc .vmem S64x32768 .f32) (h0 : M0.IsWhole)
    (M1 : Memref sig .tc .vmem S1x256x64x128 .f32) (h1 : M1.IsWhole) (f0 : Bf (F := F) c M0),
    M0.view.read (Elt F) f0 = fetched0 c a0 t d ∧
    X = M1.view.read (Elt F)
      (packRun (Ix := HIx 1) (Name := ℕ) (U := Bag.UU) (Lvl := ℕ) c (grid0.coords t) M0 h0 M1 h1 f0).1

/-- The proof data of the packing pipeline on core `c`. -/
def rdat0 (c : Dev nD) (a0 : Buf (Elt F) ((c : Thread nD τ).loc main_v0)) (a1 : Buf (Elt F) ((c : Thread nD τ).loc main_v1))
    (O : CellTallies nD τ sig (HIx 1)) (b : ℕ) : RDat τ (Elt F) (HIx 1) ℕ Bag.UU ℕ cfg0 c where
  A w := match w with
    | ⟨0, _⟩ => a0
    | ⟨1, _⟩ => a1
  after w t Y X := match w with
    | ⟨0, _⟩ => X = Y
    | ⟨1, _⟩ => OutOK c a0 t X
  Φ _ := Pipeline.scopedRest (Ix := HIx 1) (Name := ℕ) (U := Bag.UU) (Lvl := ℕ) (Val := Elt F) spec0 c
  q _ := fullShare
  owed _ := O
  recorded _ := {p | (Bag.K (F := F)).lev ((c : Thread nD τ), p.1) p.2 ≤ b}

variable (c : Dev nD) (a0 : Buf (Elt F) ((c : Thread nD τ).loc main_v0)) (a1 : Buf (Elt F) ((c : Thread nD τ).loc main_v1))
  (O : CellTallies nD τ sig (HIx 1)) (b : ℕ)

theorem rdat0_A0 : (rdat0 c a0 a1 O b).A 0 = a0 := rfl
theorem rdat0_A1 : (rdat0 c a0 a1 O b).A 1 = a1 := rfl
theorem rdat0_owed (t) : (rdat0 c a0 a1 O b).owed t = O := rfl
theorem rdat0_recorded (t) : (rdat0 c a0 a1 O b).recorded t = {p | (Bag.K (F := F)).lev ((c : Thread nD τ), p.1) p.2 ≤ b} := rfl
theorem rdat0_share (w) : (rdat0 c a0 a1 O b).share w = fullShare := by
  unfold RDat.share; split <;> rfl

/-- The input's staging buffer, just fetched at every point, holds the array's block and anything past its end. -/
theorem finds0 (t : Fin cfg0.N) (Y : (cfg0.win 0).block.Idx → Elt F (cfg0.win 0).elt) :
    (rdat0 c a0 a1 O b).Finds 0 t Y ↔ ∃ d, Y = fetched0 c a0 t d := by
  rw [RDat.finds_of_fetch _ (fetch0_0 t)]; rfl

end Cert.Proof.Pack

end
-- ==== Proof.Pack.lean ====
/-
  The packing call as a region of @main: the body obligation of its proof data at every point, the wait evidence
  for its staging cells under the debt the core carries through the region, and the entry and exit entailments
  around the thread states
    pre  = the transposed embeddings and the relaid table at their entry contents, and the core's debt;
    post = the transposed embeddings as they were, the relaid table at contents satisfying the predicate `PK`,
           and the core's debt.
-/
import proofs.«203835_g19404662243951_cont_8to1_399_35_alg».proof.Proof.PackData
import Idealize.ShloMosaic.Lib.Pipeline.Regions
import Idealize.ShloMosaic.Lib.Tactic

noncomputable section

namespace Cert.Proof.Pack

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window pin)

variable {F : FTy → Type} [FloatOps F] [Named F]

local notation "𝕄" => MT nD τ sig (HIx 1) (Elt F) ℕ Bag.UU ℕ

/-- The invariant between points: the scoped buffers this pipeline does not stage. -/
theorem rdat0_Φ (c : Dev nD) (a0 : Buf (Elt F) ((c : Thread nD τ).loc main_v0)) (a1 : Buf (Elt F) ((c : Thread nD τ).loc main_v1))
    (O : CellTallies nD τ sig (HIx 1)) (b : ℕ) (t) : (rdat0 c a0 a1 O b).Φ t
    = Pipeline.scopedRest (Ix := HIx 1) (Name := ℕ) (U := Bag.UU) (Lvl := ℕ) (Val := Elt F) spec0 c := rfl

/-- The pipelines' admissible tables: none prefetches anything. -/
abbrev adm : (p : Fin 2) → (pcfgs (F := F) p).Adm := fun p => (cfgs p).toPCfg_adm

/-- A whole memref owned at contents `X` is its buffer's points-to at contents that read `X`. -/
theorem owns_of_isWhole (c : Thread nD τ) {sp : Space} {sh : Shape} {e : EltTy} {m : Memref sig c.2.kind sp sh e}
    (hw : m.IsWhole) (q : PosShare TreeShare) (X : sh.Idx → Elt F e) :
    (owns c m q X : sProp 𝕄) = iprop(∃ f : Buf (Elt F) (m.view.loc c), ⌜m.view.read (Elt F) f = X⌝ ∗ (m.view.loc c ↦{q} f)) := by
  unfold owns; rw [hw.set_eq_univ]

variable (c : Dev nD) (a0 : Buf (Elt F) ((c : Thread nD τ).loc main_v0)) (a1 : Buf (Elt F) ((c : Thread nD τ).loc main_v1))
  (O : CellTallies nD τ sig (HIx 1)) (b : ℕ)

/-- The two arrays at contents they may hold after the write-backs below `n`, one by one. -/
theorem arraysAt0_eq (n : ℕ) :
    ((rdat0 c a0 a1 O b).arraysAt n : sProp 𝕄)
      = iprop((∃ G, ⌜(rdat0 c a0 a1 O b).ArrAt 0 n G⌝ ∗ ((c : Thread nD τ).loc main_v0 ↦{fullShare} G))
          ∗ (∃ G, ⌜(rdat0 c a0 a1 O b).ArrAt 1 n G⌝ ∗ ((c : Thread nD τ).loc main_v1 ↦{fullShare} G))) := by
  unfold RDat.arraysAt; rw [Gen.bigSep_W0]
  have e0 : ∀ G, (((cfg0.win 0).arr.view.loc (c : Thread nD τ)) ↦[(cfg0.win 0).arr.view.set]{(rdat0 c a0 a1 O b).share 0} G : sProp 𝕄)
      = ((c : Thread nD τ).loc main_v0 ↦{fullShare} G) := fun G => by
    rw [rdat0_share, (arr_whole0 0).set_eq_univ]
  have e1 : ∀ G, (((cfg0.win 1).arr.view.loc (c : Thread nD τ)) ↦[(cfg0.win 1).arr.view.set]{(rdat0 c a0 a1 O b).share 1} G : sProp 𝕄)
      = ((c : Thread nD τ).loc main_v1 ↦{fullShare} G) := fun G => by
    rw [rdat0_share, (arr_whole0 1).set_eq_univ]
  simp only [e0, e1]

/-! ## The body obligation -/

set_option maxRecDepth 8192 in
/-- At every point: from the invariant, the core's debt and the two current staging buffers — the input's at a
    fetched block, the output's at anything — the body runs to the same invariant and debt, the input's buffer as it
    was and the output's at what its stores make of that block. -/
theorem body : (rdat0 c a0 a1 O b).BodyObligation (defs₀ (F := F)) Bag.𝒱₀ (none : HIx 1) Set.univ := by
  intro t Y hY
  obtain ⟨d, hd⟩ := (finds0 c a0 a1 O b t (Y 0)).mp (hY 0)
  rw [Gen.bigSep_W0, Gen.bigSep_W0, rdat0_Φ, rdat0_Φ]
  have hw0 : ((cfg0.win 0).stage (cfg0.slots t 0)).IsWhole := stage_whole0 0 _
  have hw1 : ((cfg0.win 1).stage (cfg0.slots t 1)).IsWhole := stage_whole0 1 _
  rw [owns_of_isWhole (c : Thread nD τ) hw0, owns_of_isWhole (c : Thread nD τ) hw1]
  iintro ⟨HΦ, Howes, ⟨%f0, %hf0, H0⟩, ⟨%f1, %hf1, H1⟩⟩
  iapply ((packRun (Ix := HIx 1) (Name := ℕ) (U := Bag.UU) (Lvl := ℕ) c (grid0.coords t) (win0_0.stage (cfg0.slots t 0))
    (hstage0_0 ((cfg0.slots t 0).cast nbuf0_0)) (win0_1.stage (cfg0.slots t 1)) (hstage0_1 ((cfg0.slots t 1).cast nbuf0_1)) f0).2 f1 Set.univ _)
  isplitl [H0]; · iexact H0
  isplitl [H1]; · iexact H1
  iintro ⟨H0, H1⟩
  isplitl [HΦ]; · iexact HΦ
  isplitl [Howes]; · iexact Howes
  isplitl [H0]
  · iexists (Y 0); isplitr
    · ipureintro; exact (rfl : Y 0 = Y 0)
    rw [owns_of_isWhole (c : Thread nD τ) hw0]
    iexists f0; isplitr; · ipureintro; exact hf0
    iexact H0
  · iexists _; isplitr
    · ipureintro
      exact ⟨d, _, hstage0_0 ((cfg0.slots t 0).cast nbuf0_0), _, hstage0_1 ((cfg0.slots t 1).cast nbuf0_1), f0, hf0.trans hd, rfl⟩
    rw [owns_of_isWhole (c : Thread nD τ) hw1]
    iexists _; isplitr; · ipureintro; rfl
    iexact H1

/-! ## The region -/

/-- The relaid table's two shapes hold the same elements. -/
theorem hcast : S31x256x64x128.ShapeCasts Spec.STab := by decide

/-- The relaid table's buffer read as the rank-2 table. -/
abbrev asTab (c : Dev nD) (f : Buf (Elt F) ((c : Thread nD τ).loc main_v1)) : FVec F Spec.STab .f32 :=
  shapeCast Spec.STab (f : S31x256x64x128.Idx → Elt F .f32) hcast

section Region

variable (rdats : (p : Fin 2) → (c : Dev nD) → RDat τ (Elt F) (HIx 1) ℕ Bag.UU ℕ (pin (pcfgs (F := F)) adm p) c)
  (A0 : (c : Dev nD) → Buf (Elt F) ((c : Thread nD τ).loc main_v0)) (A1 : (c : Dev nD) → Buf (Elt F) ((c : Thread nD τ).loc main_v1))
  (Ow : Dev nD → CellTallies nD τ sig (HIx 1)) (bw : ℕ)
  (hr : ∀ c, rdats 0 c = rdat0 c (A0 c) (A1 c) (Ow c) bw)
  (hO : ∀ c g, Ow c g none = 0)
  (PK : FVec F Spec.STab .f32 → Prop)
  (hPK : ∀ c f, (rdat0 c (A0 c) (A1 c) (Ow c) bw).ArrAt 1 cfg0.N f → PK (asTab c f))

/-- The thread state the region is entered from: the two arrays at their entry contents and the core's debt, its
    recorded waits at or below level `bw`. -/
def pre0 (c : Dev nD) : sProp 𝕄 :=
  iprop(((c : Thread nD τ).loc main_v0 ↦{fullShare} A0 c) ∗ ((c : Thread nD τ).loc main_v1 ↦{fullShare} A1 c)
    ∗ ∃ W, ⌜(Bag.K (F := F)).WBelow (c : Thread nD τ) W bw⌝ ∗ owes (c : Thread nD τ) (Ow c) W)

/-- The thread state it leaves: the transposed embeddings as they were, the relaid table at contents satisfying `PK`, the debt. -/
def post0 (c : Dev nD) : sProp 𝕄 :=
  iprop(((c : Thread nD τ).loc main_v0 ↦{fullShare} A0 c)
    ∗ (∃ f : Buf (Elt F) ((c : Thread nD τ).loc main_v1), ((c : Thread nD τ).loc main_v1 ↦{fullShare} f) ∗ ⌜PK (asTab c f)⌝)
    ∗ ∃ W, ⌜(Bag.K (F := F)).WBelow (c : Thread nD τ) W bw⌝ ∗ owes (c : Thread nD τ) (Ow c) W)

include hr in
theorem share0 (c : Dev nD) (w : Fin (pin (pcfgs (F := F)) adm 0).W) : (rdats 0 c).share w = fullShare := by
  rw [hr c]; exact rdat0_share c (A0 c) (A1 c) (Ow c) bw w

theorem arr_whole (w : Fin (pin (pcfgs (F := F)) adm 0).W) : ((pin (pcfgs (F := F)) adm 0).spec w).arr.IsWhole := arr_whole0 w

include hr in
/-- The two arrays at contents `F`, one by one. -/
theorem arrays0_eq (c : Dev nD) (G : (w : Fin (pin (pcfgs (F := F)) adm 0).W) → Buf (Elt F) (((pin (pcfgs (F := F)) adm 0).spec w).arr.view.loc (c : Thread nD τ))) :
    ((rdats 0 c).arrays G : sProp 𝕄) = iprop(((c : Thread nD τ).loc main_v0 ↦{fullShare} G 0) ∗ ((c : Thread nD τ).loc main_v1 ↦{fullShare} G 1)) := by
  rw [Pipeline.RDat.arrays_eq pcfgs adm rdats 0 c arr_whole (share0 rdats A0 A1 Ow bw hr c) G]
  exact Gen.bigSep_W0 _

/-- The region record of the packing call. -/
def R0 : Pipeline.RDat.RegionSeg (pcfgs (F := F)) adm rdats (none : HIx 1) (defs₀ (F := F)) Bag.𝒱₀ (Bag.K (F := F)).L (Bag.K (F := F)).lev 0 where
  win := winFacts0.to₀
  block_pos := block_pos0
  stage_whole := stage_whole0
  K := PEmpty
  osem := fun k => k.elim
  ho := Pipeline.OwnSemFacts.none _
  hbody c := by rw [hr c]; exact body c (A0 c) (A1 c) (Ow c) bw
  hwaits c := Pipeline.RDat.cellsWaits_intro (pin (pcfgs (F := F)) adm) rdats (none : HIx 1) 0 c fun w s t => by
    rw [hr c]; exact (Bag.K (F := F)).mayWait_none _ (hO c)
  pre := pre0 A0 A1 Ow bw
  post := post0 A0 Ow bw PK
  X _ := iprop(emp)
  Y _ := iprop(emp)
  Z _ := iprop(emp)
  hentry c := by
    rw [arrays0_eq rdats A0 A1 Ow bw hr c, hr c]
    unfold pre0
    iintro ⟨⟨H0, H1, %W, %hW, Ho⟩, -, -⟩
    imodintro
    isplitl [H0 H1]
    · isplitl [H0]; · iexact H0
      iexact H1
    isplitr
    · unfold Pipeline.prefHeld; rw [show (Finset.univ : Finset (Fin 0)) = ∅ from rfl, BI.bigSep_empty]; iempintro
    isplitl [Ho]
    · iexists W; isplitr
      · ipureintro; exact fun p hp => Or.inl (hW p (Finset.mem_coe.mp hp))
      iexact Ho
    isplitr <;> iempintro
  hin c := by
    rw [hr c, rdat0_Φ]
    iintro ⟨-, -, H⟩; iexact H
  hout c := by
    rw [hr c, rdat0_Φ]
    iintro H
    isplitr; · iempintro
    isplitr
    · unfold Pipeline.ownSems0; rw [show (Finset.univ : Finset PEmpty) = ∅ from rfl, BI.bigSep_empty]; iempintro
    iexact H
  hexit c := by
    rw [hr c]
    rw [arraysAt0_eq]
    unfold post0
    iintro ⟨⟨⟨%G0, %hG0, H0⟩, ⟨%G1, %hG1, H1⟩⟩, ⟨%W, %hW, Ho⟩, -, -⟩
    imodintro
    rw [Pipeline.RDat.ArrAt_in (rdat0 c (A0 c) (A1 c) (Ow c) bw) (0 : Fin cfg0.W) rfl] at hG0
    have hG0' : G0 = A0 c := hG0
    subst hG0'
    isplitl [H0]; · iexact H0
    isplitl [H1]
    · iexists G1; isplitl [H1]; · iexact H1
      ipureintro; exact hPK c G1 hG1
    iexists W; isplitr
    · ipureintro
      intro p hp
      rcases hW (Finset.mem_coe.mpr hp) with h | ⟨w, s, rfl⟩
      · exact h
      · exact Nat.zero_le _
    iexact Ho

end Region

end Cert.Proof.Pack

end
-- ==== Proof.FfnnBody.lean ====
/-
  Region 1's body obligation: the feed-forward head's body, at any point of its pipeline, on the proof data of
  `FfnnData`. The body loads its five operand blocks whole, computes the head of the block of sums and stores it whole
  over the result's staging buffer: one triple over arbitrary whole staging memrefs, applied at the point's buffers.
-/
import proofs.«203835_g19404662243951_cont_8to1_399_35_alg».proof.Proof.FfnnData
import proofs.«203835_g19404662243951_cont_8to1_399_35_alg».proof.Proof.Gen.KernelIdeal.Skeleton
import Idealize.ShloMosaic.Lib.Tactic

noncomputable section

namespace Cert.Proof.Ffnn

open Cert.Proof.Ffnn

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig (HIx 1) (Elt F) ℕ Bag.UU ℕ

variable (c : Dev nD) (V : (b : Ref sig .tc) → Buf (Elt F) ((c : Thread nD τ).loc b)) (O : CellTallies nD τ sig (HIx 1))
  (B : Set (SemLoc sig × HIx 1))

/-! ## The body's triple -/

/-- The head as the body computes it is the body's stored value. -/
theorem block_eq_pay (x0 : Vec F S512x64 .f32) (x1 : Vec F S64x256 .f32) (x2 : Vec F S1x256 .f32) (x3 : Vec F S256x50 .f32) (x4 : Vec F S1x50 .f32) :
    block k50 x0 x1 x2 x3 x4 = k2_pay1 x0 x1 x2 x3 x4 := rfl

/-- The whole-buffer rectangle's offsets are zero. -/
theorem hz : (![0, 0] : Fin 2 → ℕ) = fun _ => 0 := funext fun a => by fin_cases a <;> rfl

/-- One store through the whole-buffer rectangle covers every index of the result block. -/
theorem cover_out (w : Vec F S512x50 .f32) (y : S512x50.Idx) :
    ∃ pc ∈ ([⟨Rect.unit (s := S512x50) ![0, 0] S512x50.size inb_S512x50_S512x50_0_0, w⟩] : List (View.Piece (Elt F) S512x50 .f32)), y ∈ pc.1.set :=
  View.cover_of_tiled [⟨Rect.unit (s := S512x50) ![0, 0] S512x50.size inb_S512x50_S512x50_0_0, w⟩] S512x50.size (by rfl) y

/-- The body on whole staging memrefs, the five inputs' at read contents `x0 … x4`, the result's at anything, runs to the
    continuation holding the inputs' as they were and the result's at the head of `x0`. -/
theorem sound_kernel (i : grid2.Coords)
    (arg1 : Memref sig .tc .vmem S512x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S256x50 .f32) (harg4 : arg4.IsWhole)
    (arg5 : Memref sig .tc .vmem S1x50 .f32) (harg5 : arg5.IsWhole) (arg6 : Memref sig .tc .vmem S512x50 .f32) (harg6 : arg6.IsWhole)
    (x0 : Vec F S512x64 .f32) (x1 : Vec F S64x256 .f32) (x2 : Vec F S1x256 .f32) (x3 : Vec F S256x50 .f32) (x4 : Vec F S1x50 .f32)
    (Kp : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (block k50 x0 x1 x2 x3 x4)) -∗ Kp ⟨⟩))
      ⊢ wp frame (wpE (defs₀ (F := F)) Bag.𝒱₀ (c : Thread nD τ) none) Set.univ
          (cc2__ffnn_body i arg1 harg1 arg2 harg2 arg3 harg3 arg4 harg4 arg5 harg5 arg6 harg6) Kp := by
  simp only [cc2__ffnn_body_eq_skeleton]; unfold cc2__ffnn_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_out _), View.canon_unit_zero hz]
  simp only [View.readAt_eq_ld, View.ld_unit_zero (S := S512x64) hz, View.ld_unit_zero (S := S64x256) hz,
    View.ld_unit_zero (S := S1x256) hz, View.ld_unit_zero (S := S256x50) hz, View.ld_unit_zero (S := S1x50) hz]
  rfl

/-! ## The body obligation, at a generic point -/

/-- What the body is called with at point `t`, the windows one by one, -/
def bodyPre (t : Fin cfg2.N) : sProp 𝕄 :=
  iprop((dat1 c V O B).Φ t.castSucc ∗ (dat1 c V O B).owesAt (none : HIx 1) t.castSucc
    ∗ (∃ d, owns (c : Thread nD τ) (st2_0 t) fullShare ((dat1 c V O B).before 0 t d))
    ∗ (∃ d, owns (c : Thread nD τ) (st2_1 t) fullShare ((dat1 c V O B).before 1 t d))
    ∗ (∃ d, owns (c : Thread nD τ) (st2_2 t) fullShare ((dat1 c V O B).before 2 t d))
    ∗ (∃ d, owns (c : Thread nD τ) (st2_3 t) fullShare ((dat1 c V O B).before 3 t d))
    ∗ (∃ d, owns (c : Thread nD τ) (st2_4 t) fullShare ((dat1 c V O B).before 4 t d))
    ∗ (∃ d, owns (c : Thread nD τ) (st2_5 t) fullShare ((dat1 c V O B).before 5 t d)))

/-- and what it returns. -/
def bodyPost (t : Fin cfg2.N) : sProp 𝕄 :=
  iprop((dat1 c V O B).Φ t.succ ∗ (dat1 c V O B).owesAt (none : HIx 1) t.succ
    ∗ owns (c : Thread nD τ) (st2_0 t) fullShare ((dat1 c V O B).after 0 t)
    ∗ owns (c : Thread nD τ) (st2_1 t) fullShare ((dat1 c V O B).after 1 t)
    ∗ owns (c : Thread nD τ) (st2_2 t) fullShare ((dat1 c V O B).after 2 t)
    ∗ owns (c : Thread nD τ) (st2_3 t) fullShare ((dat1 c V O B).after 3 t)
    ∗ owns (c : Thread nD τ) (st2_4 t) fullShare ((dat1 c V O B).after 4 t)
    ∗ owns (c : Thread nD τ) (st2_5 t) fullShare ((dat1 c V O B).after 5 t))

/-- The body at any point: the inputs' buffers hold their blocks, the result's anything; the invariant and the core's
    `owes` pass through unread. -/
theorem sound_body (t : Fin cfg2.N) :
    bodyPre c V O B t ⊢ wp frame (wpE (defs₀ (F := F)) Bag.𝒱₀ (c : Thread nD τ) none) Set.univ (bodyAt2 t) (fun _ => bodyPost c V O B t) := by
  unfold bodyPre bodyPost bodyAt2
  simp only [before_0, before_1, before_2, before_3, before_4, before_5]
  rw [show (dat1 c V O B).Φ t.succ = (dat1 c V O B).Φ t.castSucc from rfl,
    show (dat1 c V O B).owesAt (none : HIx 1) t.succ = (dat1 c V O B).owesAt (none : HIx 1) t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c _ _ _ _ _ _ _ _ _ _ _ _ _ (iblk c V 0 t) (iblk c V 1 t) (iblk c V 2 t) (iblk c V 3 t) (iblk c V 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation : BodyObligation (dat1 (F := F) c V O B) (defs₀ (F := F)) Bag.𝒱₀ (none : HIx 1) Set.univ := fun t => by
  rw [bigSep_W2, bigSep_W2]
  exact sound_body c V O B t

end Cert.Proof.Ffnn

end
-- ==== Proof.FfnnValue.lean ====
/-
  The result array after region 1: every block of 512 rows written back is the head of the same block of the sums, and the
  8 blocks tile the array, so the array ends holding `Ffnn.out` of the sums and the four parameter arrays.

  A window's block at point `t` sits in its array, on each axis, at the block index times the block's size: the sums' and
  the result's windows have block index `(t, 0)`, the four parameter windows `(0, 0)` (each is its whole array).
-/
import proofs.«203835_g19404662243951_cont_8to1_399_35_alg».proof.Proof.FfnnData

noncomputable section

namespace Cert.Proof.Ffnn

open Cert.Proof.Ffnn

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.Sem
open Idealize.ShloMosaic.Pipeline (Dat Cfg Window)

variable {F : FTy → Type} [FloatOps F] [Named F]

/-- Row `512 t + r` of the head of the whole array is row `r` of the head of block `t`. -/
theorem out_apply (k : F .f32) (s : FVec F SSum .f32) (w1 : FVec F SW1 .f32) (b1 : FVec F SB1 .f32) (w2 : FVec F SW2 .f32)
    (b2 : FVec F SB2 .f32) (i : SOut.Idx) (t : Nat) (x : SO.Idx) (h0 : (i 0).val = 512 * t + (x 0).val) (h1 : (i 1).val = (x 1).val) :
    out k s w1 b1 w2 b2 i = block k (rowsOf s t) w1 b1 w2 b2 x := by
  have hx : (x 0).val < 512 := (x 0).isLt
  have hd : (i 0).val / 512 = t := by omega
  have hm : (i 0).val % 512 = (x 0).val := by omega
  unfold out
  rw [hd]
  congr 1
  funext a
  match a with
  | ⟨0, _⟩ => exact Fin.ext hm
  | ⟨1, _⟩ => exact Fin.ext h1

/-- The block indices of the six windows. -/
theorem index_0 (t : Fin cfg2.N) : win2_0.index t 0 = t.val ∧ win2_0.index t 1 = 0 := by
  rcases fin_N2 t with rfl | rfl | rfl | rfl | rfl | rfl | rfl | rfl <;> decide
theorem index_1 (t : Fin cfg2.N) : win2_1.index t 0 = 0 ∧ win2_1.index t 1 = 0 := by
  rcases fin_N2 t with rfl | rfl | rfl | rfl | rfl | rfl | rfl | rfl <;> decide
theorem index_2 (t : Fin cfg2.N) : win2_2.index t 0 = 0 ∧ win2_2.index t 1 = 0 := by
  rcases fin_N2 t with rfl | rfl | rfl | rfl | rfl | rfl | rfl | rfl <;> decide
theorem index_3 (t : Fin cfg2.N) : win2_3.index t 0 = 0 ∧ win2_3.index t 1 = 0 := by
  rcases fin_N2 t with rfl | rfl | rfl | rfl | rfl | rfl | rfl | rfl <;> decide
theorem index_4 (t : Fin cfg2.N) : win2_4.index t 0 = 0 ∧ win2_4.index t 1 = 0 := by
  rcases fin_N2 t with rfl | rfl | rfl | rfl | rfl | rfl | rfl | rfl <;> decide
theorem index_5 (t : Fin cfg2.N) : win2_5.index t 0 = t.val ∧ win2_5.index t 1 = 0 := by
  rcases fin_N2 t with rfl | rfl | rfl | rfl | rfl | rfl | rfl | rfl <;> decide

variable (c : Dev nD) (V : (b : Ref sig .tc) → Buf (Elt F) ((c : Thread nD τ).loc b)) (O : CellTallies nD τ sig (HIx 1))
  (B : Set (SemLoc sig × HIx 1))

/-- The sums' block at point `t` is rows `[512 t, 512 t + 512)` of the sums. -/
theorem iblk_0 (t : Fin cfg2.N) : iblk c V 0 t = rowsOf (V main_v5) t.val := by
  funext x
  have hx : (x 0).val < 512 := (x 0).isLt
  have ht : t.val < 8 := by have := t.isLt; have h8 : cfg2.N = 8 := N_2; omega
  unfold iblk rowsOf
  rw [View.read_apply, dif_pos (show 512 * t.val + (x 0).val < 4096 by omega)]
  show V main_v5 _ = V main_v5 _
  congr 1
  funext a
  apply Fin.ext
  match a with
  | ⟨0, _⟩ => show win2_0.index t 0 * 512 + 1 * (x 0).val = 512 * t.val + (x 0).val; rw [(index_0 t).1]; omega
  | ⟨1, _⟩ => show win2_0.index t 1 * 64 + 1 * (x 1).val = (x 1).val; rw [(index_0 t).2]; omega

/-- Each parameter window's block is its whole array. -/
theorem iblk_1 (t : Fin cfg2.N) : iblk c V 1 t = V main_arg2 := by
  funext x
  unfold iblk
  rw [View.read_apply]
  show V main_arg2 _ = V main_arg2 x
  congr 1
  funext a
  apply Fin.ext
  match a with
  | ⟨0, _⟩ => show win2_1.index t 0 * 64 + 1 * (x 0).val = (x 0).val; rw [(index_1 t).1]; omega
  | ⟨1, _⟩ => show win2_1.index t 1 * 256 + 1 * (x 1).val = (x 1).val; rw [(index_1 t).2]; omega
theorem iblk_2 (t : Fin cfg2.N) : iblk c V 2 t = V main_v6 := by
  funext x
  unfold iblk
  rw [View.read_apply]
  show V main_v6 _ = V main_v6 x
  congr 1
  funext a
  apply Fin.ext
  match a with
  | ⟨0, _⟩ => show win2_2.index t 0 * 1 + 1 * (x 0).val = (x 0).val; rw [(index_2 t).1]; omega
  | ⟨1, _⟩ => show win2_2.index t 1 * 256 + 1 * (x 1).val = (x 1).val; rw [(index_2 t).2]; omega
theorem iblk_3 (t : Fin cfg2.N) : iblk c V 3 t = V main_arg4 := by
  funext x
  unfold iblk
  rw [View.read_apply]
  show V main_arg4 _ = V main_arg4 x
  congr 1
  funext a
  apply Fin.ext
  match a with
  | ⟨0, _⟩ => show win2_3.index t 0 * 256 + 1 * (x 0).val = (x 0).val; rw [(index_3 t).1]; omega
  | ⟨1, _⟩ => show win2_3.index t 1 * 50 + 1 * (x 1).val = (x 1).val; rw [(index_3 t).2]; omega
theorem iblk_4 (t : Fin cfg2.N) : iblk c V 4 t = V main_v7 := by
  funext x
  unfold iblk
  rw [View.read_apply]
  show V main_v7 _ = V main_v7 x
  congr 1
  funext a
  apply Fin.ext
  match a with
  | ⟨0, _⟩ => show win2_4.index t 0 * 1 + 1 * (x 0).val = (x 0).val; rw [(index_4 t).1]; omega
  | ⟨1, _⟩ => show win2_4.index t 1 * 50 + 1 * (x 1).val = (x 1).val; rw [(index_4 t).2]; omega

/-- The head of the whole array of sums, as contents of the result array. -/
abbrev result : Buf (Elt F) ((c : Thread nD τ).loc main_v8) :=
  out k50 (V main_v5) (V main_arg2) (V main_v6) (V main_arg4) (V main_v7)

/-- What each point writes back is its block of `result`. -/
theorem flushed_eq (t : Fin cfg2.N) (hf : (cfg2.win 5).flush t = true) :
    (dat1 c V O B).flushed 5 t = ((cfg2.win 5).blk t).view.read (Elt F) (result c V) := by
  show (cfg2.win 5).cut (grid2.coords t) ((dat1 c V O B).after 5 t) = _
  rw [after_5]
  funext x
  rw [View.read_apply]
  show oblk c V t x = result c V _
  unfold oblk result
  rw [iblk_0, iblk_1, iblk_2, iblk_3, iblk_4]
  refine (out_apply k50 _ _ _ _ _ _ t.val x ?_ ?_).symm
  · show win2_5.index t 0 * 512 + 1 * (x 0).val = 512 * t.val + (x 0).val; rw [(index_5 t).1]; omega
  · show win2_5.index t 1 * 50 + 1 * (x 1).val = (x 1).val; rw [(index_5 t).2]; omega

/-- The 8 blocks tile the result array. -/
theorem cover5 (i : S4096x50.Idx) : ∃ t : Fin cfg2.N, (cfg2.win 5).flush t = true ∧ i ∈ ((cfg2.win 5).blk t).view.set := by
  have hi : (i 0).val < 4096 := (i 0).isLt
  have hi1 : (i 1).val < 50 := (i 1).isLt
  have ht : (i 0).val / 512 < cfg2.N := by rw [show cfg2.N = 8 from N_2]; omega
  refine ⟨⟨(i 0).val / 512, ht⟩, flush2_5 _, ?_⟩
  show i ∈ ((View.whole main_v8).slice (win2_5.rect ⟨(i 0).val / 512, ht⟩)).set
  rw [View.set_slice_whole, Rect.mem_set_unit]
  intro a
  match a with
  | ⟨0, _⟩ =>
    show win2_5.index ⟨(i 0).val / 512, ht⟩ 0 * 512 ≤ (i 0 : Nat) ∧ (i 0 : Nat) < win2_5.index ⟨(i 0).val / 512, ht⟩ 0 * 512 + 512
    rw [(index_5 ⟨(i 0).val / 512, ht⟩).1]; show (i 0).val / 512 * 512 ≤ _ ∧ _ < (i 0).val / 512 * 512 + 512; omega
  | ⟨1, _⟩ =>
    show win2_5.index ⟨(i 0).val / 512, ht⟩ 1 * 50 ≤ (i 1 : Nat) ∧ (i 1 : Nat) < win2_5.index ⟨(i 0).val / 512, ht⟩ 1 * 50 + 50
    rw [(index_5 ⟨(i 0).val / 512, ht⟩).2]; omega

/-- So the result array ends holding the head of the whole array of sums. -/
theorem final_o : (dat1 c V O B).arrAt 5 cfg2.N = result c V :=
  (dat1 c V O B).arrAt_eq_of_cover 5 (result c V) (flushed_eq c V O B) cover5

end Cert.Proof.Ffnn

end
-- ==== Proof.FfnnRegion.lean ====
/-
  Region 1 as a segment of the program: the region's record, over any family of proof data whose entry for
  pipeline 1 is `FfnnData`'s read relationally. Entered holding the six arrays as found and the core owing nothing, left
  holding the five operands unchanged, the result array at the head of the whole array of sums (`FfnnValue`), and the core
  owing nothing; the pairs its waits have recorded stay at or below a given level.
-/
import proofs.«203835_g19404662243951_cont_8to1_399_35_alg».proof.Proof.FfnnBody
import proofs.«203835_g19404662243951_cont_8to1_399_35_alg».proof.Proof.FfnnValue
import proofs.«203835_g19404662243951_cont_8to1_399_35_alg».proof.Proof.Region

noncomputable section

namespace Cert.Proof.Ffnn

open Cert.Proof.Ffnn

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig (HIx 1) (Elt F) ℕ Bag.UU ℕ

/-! ## The region's record -/

section Region

variable (V : (c : Dev nD) → (b : Ref sig .tc) → Buf (Elt F) ((c : Thread nD τ).loc b)) (b : ℕ)

/-- The five operand arrays as the region finds them and leaves them. -/
def inArrs (c : Dev nD) : sProp 𝕄 :=
  iprop((((c : Thread nD τ).loc main_v5) ↦{fullShare} V c main_v5) ∗ (((c : Thread nD τ).loc main_arg2) ↦{fullShare} V c main_arg2)
    ∗ (((c : Thread nD τ).loc main_v6) ↦{fullShare} V c main_v6) ∗ (((c : Thread nD τ).loc main_arg4) ↦{fullShare} V c main_arg4)
    ∗ (((c : Thread nD τ).loc main_v7) ↦{fullShare} V c main_v7))

/-- What the core owes (nothing), its recorded pairs at or below level `b`. -/
def owesB (c : Dev nD) : sProp 𝕄 :=
  iprop(∃ W, ⌜(Bag.K (F := F)).WBelow (c : Thread nD τ) W b⌝ ∗ owes (c : Thread nD τ) (0 : CellTallies nD τ sig (HIx 1)) W)

/-- The thread state the region is entered from: the six arrays as found, the core owing nothing. -/
def pre1 (c : Dev nD) : sProp 𝕄 :=
  iprop(inArrs V c ∗ (((c : Thread nD τ).loc main_v8) ↦{fullShare} V c main_v8) ∗ owesB (F := F) b c)

/-- The thread state it leaves: the operands unchanged, the result written. -/
def post1 (c : Dev nD) : sProp 𝕄 :=
  iprop(inArrs V c ∗ (((c : Thread nD τ).loc main_v8) ↦{fullShare} result c (V c)) ∗ owesB (F := F) b c)

/-- The six arrays of the proof data, one by one. -/
theorem arrays6 (c : Dev nD) (G : (w : Fin cfg2.W) → Buf (Elt F) ((cfg2.win w).arr.view.loc (c : Thread nD τ))) :
    ((dat1b c (V c) 0 b).arrays G : sProp 𝕄)
      = iprop((((c : Thread nD τ).loc main_v5) ↦{fullShare} G 0) ∗ (((c : Thread nD τ).loc main_arg2) ↦{fullShare} G 1)
        ∗ (((c : Thread nD τ).loc main_v6) ↦{fullShare} G 2) ∗ (((c : Thread nD τ).loc main_arg4) ↦{fullShare} G 3)
        ∗ (((c : Thread nD τ).loc main_v7) ↦{fullShare} G 4) ∗ (((c : Thread nD τ).loc main_v8) ↦{fullShare} G 5)) := by
  unfold Dat.arrays
  rw [bigSep_W2]
  simp only [(dat1b c (V c) 0 b).share_full (fun _ => rfl)]
  simp only [Memref.view_whole, View.set_whole]

/-- The invariant is the scoped rest, at every point. -/
theorem Φ_eq (c : Dev nD) (t : Fin (cfg2.N + 1)) :
    (dat1b c (V c) 0 b).toR.Φ t = Pipeline.scopedRest (Ix := HIx 1) (Name := ℕ) (U := Bag.UU) (Lvl := ℕ) (Val := Elt F) spec2 c := rfl

/-- ENTRY: the six arrays are the pipeline's, at the data's entry contents; the core's `owes` within the data's bound. -/
theorem entry1 (c : Dev nD) (R : sProp 𝕄) :
    iprop(pre1 V b c ∗ R)
      ⊢ iprop((dat1b c (V c) 0 b).toR.arrays (dat1b c (V c) 0 b).toR.A ∗ (dat1b c (V c) 0 b).toR.owesAt (none : HIx 1) 0) := by
  simp only [Pipeline.Dat.toR_arrays, Pipeline.Dat.toR_A]
  rw [arrays6]
  unfold pre1 inArrs owesB
  iintro ⟨⟨⟨H0, H1, H2, H3, H4⟩, H5, HO⟩, -⟩
  isplitl [H0 H1 H2 H3 H4 H5]
  · isplitl [H0]; · iexact H0
    isplitl [H1]; · iexact H1
    isplitl [H2]; · iexact H2
    isplitl [H3]; · iexact H3
    isplitl [H4]; · iexact H4
    iexact H5
  unfold Pipeline.RDat.owesAt Pipeline.owesWithin
  icases HO with ⟨%W, %hW, HO⟩; iexists W; isplitr; · ipureintro; exact fun p hp => Or.inl (hW p hp)
  iexact HO

/-- EXIT: the arrays after the last write-back and the core's `owes` make the exit state. -/
theorem exit1 (c : Dev nD) :
    iprop((dat1b c (V c) 0 b).toR.arraysAt cfg2.N ∗ (dat1b c (V c) 0 b).toR.owesAt (none : HIx 1) (Fin.last cfg2.N))
      ⊢ post1 V b c := by
  rw [Pipeline.Dat.toR_arraysAt_eq, arrays6]
  rw [(dat1b c (V c) 0 b).arrAt_in 0 rfl, (dat1b c (V c) 0 b).arrAt_in 1 rfl, (dat1b c (V c) 0 b).arrAt_in 2 rfl,
    (dat1b c (V c) 0 b).arrAt_in 3 rfl, (dat1b c (V c) 0 b).arrAt_in 4 rfl, final_o c (V c) 0 (lvlSet (F := F) c b)]
  unfold post1 inArrs owesB
  iintro ⟨⟨H0, H1, H2, H3, H4, H5⟩, HO⟩
  isplitl [H0 H1 H2 H3 H4]
  · isplitl [H0]; · iexact H0
    isplitl [H1]; · iexact H1
    isplitl [H2]; · iexact H2
    isplitl [H3]; · iexact H3
    iexact H4
  isplitl [H5]; · iexact H5
  unfold Pipeline.RDat.owesAt Pipeline.owesWithin
  icases HO with ⟨%W, %hW, HO⟩; iexists W; isplitr
  · ipureintro
    intro p hp
    rcases hW hp with h | ⟨w, s, rfl⟩
    · exact h
    · exact Nat.zero_le _
  iexact HO

end Region

section Record

variable (V : (c : Dev nD) → (b : Ref sig .tc) → Buf (Elt F) ((c : Thread nD τ).loc b)) (b : ℕ)
variable (rdats : (p : Fin 2) → (c : Dev nD) → Pipeline.RDat τ (Elt F) (HIx 1) ℕ Bag.UU ℕ (Pipeline.pin (pcfgs (F := F)) Bag.adm p) c)

set_option backward.isDefEq.respectTransparency.types false in
/-- REGION 1 over a family of proof data whose entry for pipeline 1 is the data above read relationally: entered from
    `pre1` (the arrays sorted into the pipeline's, nothing else enters), left at `post1`. The kernel has no semaphore
    of its own; the invariant is the scoped rest. -/
def R1 (h1 : ∀ c, rdats 1 c = (dat1b c (V c) 0 b).toR) :
    Pipeline.RDat.RegionSeg (pcfgs (F := F)) Bag.adm rdats (none : HIx 1) defs₀ Bag.𝒱₀ (Bag.K (F := F)).L (Bag.K (F := F)).lev 1 where
  win := launch2.win.to₀
  block_pos := launch2.block_pos
  stage_whole := launch2.stage_whole
  K := PEmpty
  osem k := k.elim
  ho := Pipeline.OwnSemFacts.none _
  hbody c := by rw [h1 c]; exact (body_obligation c (V c) 0 _).loose.toR
  hwaits := Pipeline.RDat.hwaits_of_owed_zero _ _ _ _ _ _ 1 fun c t => by rw [h1 c]; rfl
  pre := pre1 V b
  post := post1 V b
  X _ := BI.emp
  Y _ := BI.emp
  Z _ := BI.emp
  hentry c := by
    rw [h1 c]
    refine (entry1 V b c _).trans ?_
    iintro ⟨Ha, HO⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [h1 c]
    refine .trans ?_ (Entails.of_eq (Φ_eq V b c 0).symm)
    show iprop(_ ∗ _ ∗ Pipeline.scopedRest (Ix := HIx 1) (Name := ℕ) (U := Bag.UU) (Lvl := ℕ) (Val := Elt F) spec2 c) ⊢ _
    iintro ⟨-, -, Hr⟩; iexact Hr
  hout c := by
    rw [Pipeline.ownSems0_none, h1 c]
    refine (Entails.of_eq (Φ_eq V b c _)).trans ?_
    show _ ⊢ iprop(_ ∗ _ ∗ Pipeline.scopedRest (Ix := HIx 1) (Name := ℕ) (U := Bag.UU) (Lvl := ℕ) (Val := Elt F) spec2 c)
    iintro Hr
    isplitr; · iempintro
    isplitr; · iempintro
    iexact Hr
  hexit c := by
    rw [h1 c]
    iintro ⟨Ha, HO, -, -⟩
    imodintro
    iapply (exit1 V b c)
    isplitl [Ha] <;> iassumption

end Record

end Cert.Proof.Ffnn

end
-- ==== Proof.Join.lean ====
/-
  The two TensorCore regions joined: the relaying region and the dense region as the records of `Pack` and `FfnnRegion`,
  each over a family of proof data for both pipelines, with their entry and exit states spelt over @main's arrays.

  The relaying region is entered with the transposed embeddings and the relaid table's buffer as launched. The dense region
  is entered after the SparseCore call and the two reshapes: the core's buffers are then the launch memory's but for the
  sums (the bag sums over whatever table the relaying left) and the two bias rows.
-/
import proofs.«203835_g19404662243951_cont_8to1_399_35_alg».proof.Proof.Main
import proofs.«203835_g19404662243951_cont_8to1_399_35_alg».proof.Proof.Pack
import proofs.«203835_g19404662243951_cont_8to1_399_35_alg».proof.Proof.FfnnRegion

noncomputable section

namespace Cert.Proof.Ffnn

open Cert.Proof.Ffnn

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig (HIx 1) (Elt F) ℕ Bag.UU ℕ

/-! ## A valuation changed at the sums and the two bias rows -/

/-- A valuation of the core's buffers changed at the sums and the two reshaped bias rows. -/
def setV (c : Dev nD) (V₀ : (b : Ref sig .tc) → Buf (Elt F) ((c : Thread nD τ).loc b))
    (s : Buf (Elt F) ((c : Thread nD τ).loc main_v5)) (b1 : Buf (Elt F) ((c : Thread nD τ).loc main_v6))
    (b2 : Buf (Elt F) ((c : Thread nD τ).loc main_v7)) : (b : Ref sig .tc) → Buf (Elt F) ((c : Thread nD τ).loc b) :=
  Function.update (Function.update (Function.update V₀ main_v5 s) main_v6 b1) main_v7 b2

section SetV

variable (c : Dev nD) (V₀ : (b : Ref sig .tc) → Buf (Elt F) ((c : Thread nD τ).loc b))
    (s : Buf (Elt F) ((c : Thread nD τ).loc main_v5)) (b1 : Buf (Elt F) ((c : Thread nD τ).loc main_v6))
    (b2 : Buf (Elt F) ((c : Thread nD τ).loc main_v7))

theorem setV_v5 : setV c V₀ s b1 b2 main_v5 = s := by
  unfold setV
  rw [Function.update_of_ne (by decide), Function.update_of_ne (by decide), Function.update_self]
theorem setV_v6 : setV c V₀ s b1 b2 main_v6 = b1 := by
  unfold setV
  rw [Function.update_of_ne (by decide), Function.update_self]
theorem setV_v7 : setV c V₀ s b1 b2 main_v7 = b2 := by
  unfold setV
  rw [Function.update_self]
theorem setV_of_ne (b : Ref sig .tc) (h5 : b ≠ main_v5) (h6 : b ≠ main_v6) (h7 : b ≠ main_v7) : setV c V₀ s b1 b2 b = V₀ b := by
  unfold setV
  rw [Function.update_of_ne h7, Function.update_of_ne h6, Function.update_of_ne h5]
theorem setV_arg2 : setV c V₀ s b1 b2 main_arg2 = V₀ main_arg2 := setV_of_ne c V₀ s b1 b2 _ (by decide) (by decide) (by decide)
theorem setV_arg4 : setV c V₀ s b1 b2 main_arg4 = V₀ main_arg4 := setV_of_ne c V₀ s b1 b2 _ (by decide) (by decide) (by decide)
theorem setV_v8 : setV c V₀ s b1 b2 main_v8 = V₀ main_v8 := setV_of_ne c V₀ s b1 b2 _ (by decide) (by decide) (by decide)

end SetV

/-! ## The two families and the two records -/

variable (m : (ℓ : Loc nD τ sig) → Buf (Elt F) ℓ) (PK : FVec F Spec.STab .f32 → Prop)

/-- The core's buffers as launched. -/
abbrev Vm (c : Dev nD) : (b : Ref sig .tc) → Buf (Elt F) ((c : Thread nD τ).loc b) := fun b => m ((c : Thread nD τ).loc b)

/-- The core's buffers when the dense region is entered, the relaid table holding `tab`. -/
def Vr (tab : FVec F Spec.STab .f32) (c : Dev nD) : (b : Ref sig .tc) → Buf (Elt F) ((c : Thread nD τ).loc b) :=
  setV c (Vm m c) (Spec.bagSums (Bag.flatM m c) tab) (Bag.b1r m c) (Bag.b2r m c)

/-- The relaying pipeline's proof data. -/
abbrev rdP (c : Dev nD) : Pipeline.RDat τ (Elt F) (HIx 1) ℕ Bag.UU ℕ cfg0 c :=
  Pack.rdat0 c (Bag.a0 m c) (m ((c : Thread nD τ).loc main_v1)) ((Bag.K (F := F)).Otc c 0) 0

/-- The family the relaying region is certified over: its own data, and the dense pipeline's at the launch memory. -/
def rd0 : (p : Fin 2) → (c : Dev nD) → Pipeline.RDat τ (Elt F) (HIx 1) ℕ Bag.UU ℕ (Pipeline.pin (pcfgs (F := F)) Bag.adm p) c :=
  fun p c => match p with
    | ⟨0, _⟩ => rdP m c
    | ⟨1, _⟩ => (dat1b c (Vm m c) 0 8).toR

/-- The family the dense region is certified over, the relaid table holding `tab`. -/
def rd1 (tab : FVec F Spec.STab .f32) : (p : Fin 2) → (c : Dev nD) → Pipeline.RDat τ (Elt F) (HIx 1) ℕ Bag.UU ℕ (Pipeline.pin (pcfgs (F := F)) Bag.adm p) c :=
  fun p c => match p with
    | ⟨0, _⟩ => rdP m c
    | ⟨1, _⟩ => (dat1b c (Vr m tab c) 0 8).toR

/-- Before the SparseCore call the TensorCore owes nothing at the index of the pipelines' own waits. -/
theorem Otc_none (c : Dev nD) (n : ℕ) (g : GSem nD τ sig) : (Bag.K (F := F)).Otc c n g none = 0 := by
  by_contra h
  have := SparseCore.Cfg.lev_of_Otc_pos (K := Bag.K (F := F)) (Nat.pos_of_ne_zero h)
  rw [SparseCore.Cfg.lev_none] at this
  omega

/-- The two regions. -/
def regions (hPK : ∀ c f, (rdP m c).ArrAt 1 cfg0.N f → PK (Pack.asTab c f)) : Bag.Regions m PK where
  rd0 := rd0 m
  R0 := Pack.R0 (rd0 m) (Bag.a0 m) (fun c => m ((c : Thread nD τ).loc main_v1)) (fun c => (Bag.K (F := F)).Otc c 0) 0 (fun _ => rfl)
    (fun c g => Otc_none c 0 g) PK hPK
  pre0 d := BI.Entails.refl _
  post0 d := BI.Entails.refl _
  rd1 := rd1 m
  R1 tab := R1 (Vr m tab) 8 (rd1 m tab) (fun _ => rfl)
  pre1 tab d := by
    show _ ⊢ pre1 (Vr m tab) 8 d
    unfold pre1 inArrs owesB Vr
    rw [setV_v5, setV_v6, setV_v7, setV_arg2, setV_arg4, setV_v8]
    iintro ⟨H5, H2, H6, H4, H7, H8, HO⟩
    isplitl [H5 H2 H6 H4 H7]
    · isplitl [H5]; · iexact H5
      isplitl [H2]; · iexact H2
      isplitl [H6]; · iexact H6
      isplitl [H4]; · iexact H4
      iexact H7
    isplitl [H8]; · iexact H8
    iexact HO
  post1 tab d := by
    show post1 (Vr m tab) 8 d ⊢ _
    unfold post1 inArrs owesB result Vr
    rw [setV_v5, setV_v6, setV_v7, setV_arg2, setV_arg4]
    iintro ⟨⟨H5, H2, H6, H4, H7⟩, H8, HO⟩
    isplitl [H5]; · iexact H5
    isplitl [H2]; · iexact H2
    isplitl [H6]; · iexact H6
    isplitl [H4]; · iexact H4
    isplitl [H7]; · iexact H7
    isplitl [H8]; · iexact H8
    iexact HO

end Cert.Proof.Ffnn

end
-- ==== Proof.TilePre.lean ====
/-
  One vector subcore's scratch: its five buffers and six DMA semaphores picked out of the subcore's own storage, and the
  operands as the subcore's memrefs address them.
-/
import proofs.«203835_g19404662243951_cont_8to1_399_35_alg».proof.Proof.TileDefs

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The worker number of the subcore at `L`. -/
def wL (L : grid1.Coords) : Fin 32 := widF (Fin.cast bound_zero (L 0)) (Fin.cast bound_one (L 1))

/-- The six DMA semaphores of the scratch, in the kernel's order: the two gathers', the two index copies', the two
    write-backs'. -/
def semOf : Fin 6 → DmaSem sig
  | 0 => cc1_scratch5.sem | 1 => cc1_scratch6.sem | 2 => cc1_scratch7.sem
  | 3 => cc1_scratch8.sem | 4 => cc1_scratch9.sem | 5 => cc1_scratch10.sem
abbrev cellK (d : Dev nD) (c : Fin τ.nSC) (i : Fin τ.nSub) (k : Fin 6) : GSem nD τ sig := (V d c i, .dma (semOf k))

theorem semOf_inj : Function.Injective semOf := by decide

def cellEmb (d : Dev nD) (c : Fin τ.nSC) (i : Fin τ.nSub) : Fin 6 ↪ GSem nD τ sig :=
  ⟨cellK d c i, fun a b e => semOf_inj (SemLoc.dma.inj (Prod.mk.inj e).2)⟩

theorem cells_sub (c : Fin τ.nSC) (i : Fin τ.nSub) : Finset.univ.map (cellEmb d c i) ⊆ ownCells (V d c i) := by
  intro g hg
  obtain ⟨k, -, rfl⟩ := Finset.mem_map.mp hg
  refine mem_ownCells.mpr ⟨rfl, ?_⟩
  have h : ∀ k : Fin 6, (SemLoc.dma (semOf k) : SemLoc sig).isScoped .scVector = true := by decide
  exact h k

omit d in
theorem bigSep_fin6 (Φ : Fin 6 → sProp 𝕄) :
    bigSep (Finset.univ : Finset (Fin 6)) Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]
omit d in
theorem bigSep_fin5 (Φ : Fin 5 → sProp 𝕄) :
    bigSep (Finset.univ : Finset (Fin 5)) Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-- The subcore's own semaphores at zero: the scratch's six and the rest. -/
theorem ownSems0_V (c : Fin τ.nSC) (i : Fin τ.nSub) :
    (ownSems0 (V d c i) : sProp 𝕄)
      = iprop((semVal (cellK d c i 0) 0 ∗ semVal (cellK d c i 1) 0 ∗ semVal (cellK d c i 2) 0 ∗ semVal (cellK d c i 3) 0
          ∗ semVal (cellK d c i 4) 0 ∗ semVal (cellK d c i 5) 0)
          ∗ bigSep (ownCells (V d c i) \ Finset.univ.map (cellEmb d c i)) fun g => semVal g 0) := by
  unfold SparseCore.Cfg.ownSems0
  rw [SparseCore.bigSep_sdiff_split' (cells_sub d c i), BI.bigSep_map, bigSep_fin6]
  rfl

/-- The five buffers of the scratch, in the kernel's order: the index words, the table rows' numbers, the column
    offsets, the gathered rows (two slots), the sums written back (two slots). -/
def bufOf : Fin 5 → Ref sig .scVector
  | 0 => cc1_scratch0 | 1 => cc1_scratch1 | 2 => cc1_scratch2 | 3 => cc1_scratch3 | 4 => cc1_scratch4

theorem bufOf_inj : Function.Injective bufOf := by decide

def bufEmb (c : Fin τ.nSC) (i : Fin τ.nSub) : Fin 5 ↪ DevRef τ sig :=
  ⟨fun k => (Proc.scVector c i).devRef (bufOf k), fun a b e => bufOf_inj (Proc.devRef_injective _ e)⟩

theorem bufs_sub (c : Fin τ.nSC) (i : Fin τ.nSub) : Finset.univ.map (bufEmb c i) ⊆ ownRefs (τ := τ) (sig := sig) (.scVector c i) := by
  intro b hb
  obtain ⟨k, -, rfl⟩ := Finset.mem_map.mp hb
  have h : ∀ k : Fin 5, ((Proc.scVector c i).devRef (bufOf k)).owner = .proc (.scVector c i) := by
    intro k; fin_cases k <;> rfl
  exact SparseCore.Cfg.mem_ownRefs_of_owner (p := Proc.scVector c i) (h k)

/-- The subcore's own buffers: the scratch's five, each whole at some contents, and the rest. -/
theorem ownBufs_V (c : Fin τ.nSC) (i : Fin τ.nSub) :
    (ownBufs (V d c i) : sProp 𝕄)
      = iprop(((∃ f, (V d c i).loc cc1_scratch0 ↦{fullShare} f) ∗ (∃ f, (V d c i).loc cc1_scratch1 ↦{fullShare} f)
          ∗ (∃ f, (V d c i).loc cc1_scratch2 ↦{fullShare} f) ∗ (∃ f, (V d c i).loc cc1_scratch3 ↦{fullShare} f)
          ∗ (∃ f, (V d c i).loc cc1_scratch4 ↦{fullShare} f))
          ∗ bigSep (ownRefs (τ := τ) (sig := sig) (.scVector c i) \ Finset.univ.map (bufEmb c i))
              fun b => iprop(∃ f, ((d, b) : Loc nD τ sig) ↦{fullShare} f)) := by
  unfold SparseCore.Cfg.ownBufs
  rw [show (V d c i : Thread nD τ).2 = .scVector c i from rfl, SparseCore.bigSep_sdiff_split' (bufs_sub c i), BI.bigSep_map, bigSep_fin5]
  rfl

end Tile

end Cert.Proof.Bag

end
-- ==== Proof.Tile.lean ====
/-
  One vector subcore's task of the bag-sum kernel, and the launch theorem's tile obligation from it.

  The task, at a symbolic place (SparseCore `L 0`, subcore `L 1`, worker `w = 2 (L 1) + L 0`): from a read share of the flat
  index array and of the relaid table, the worker's eight blocks of sixteen rows of the sums at whatever they hold, its five
  scratch buffers and six DMA semaphores at zero, to the same with the eight blocks holding the bag sums. `TileBody` states
  it over the kernel's body as the body table calls it; `tileObl_of_body` carries it to the launch theorem's obligation
  for every tile of every SparseCore.
-/
import proofs.«203835_g19404662243951_cont_8to1_399_35_alg».proof.Proof.TilePre
import proofs.«203835_g19404662243951_cont_8to1_399_35_alg».proof.Proof.Pay

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

section Tile

variable (d : Dev nD) (L : grid1.Coords)

/-- The subcore's thread. -/
abbrev thr : Thread nD τ := V d (cV L) (jV L)

omit [FloatOps F] [Named F] in
/-- The subcore's own semaphores at zero: the scratch's six, named as the body names them, and the rest. -/
theorem ownSems0_V' :
    (ownSems0 (thr d L) : sProp 𝕄)
      = iprop((semVal (thr d L, SemLoc.dma cc1_scratch5.sem) 0 ∗ semVal (thr d L, SemLoc.dma cc1_scratch6.sem) 0
          ∗ semVal (thr d L, SemLoc.dma cc1_scratch7.sem) 0 ∗ semVal (thr d L, SemLoc.dma cc1_scratch8.sem) 0
          ∗ semVal (thr d L, SemLoc.dma cc1_scratch9.sem) 0 ∗ semVal (thr d L, SemLoc.dma cc1_scratch10.sem) 0)
          ∗ bigSep (ownCells (thr d L) \ Finset.univ.map (cellEmb d (cV L) (jV L))) fun g => semVal g 0) :=
  ownSems0_V d (cV L) (jV L)

/-! ## The operands and scratches as the subcore's memrefs address them -/

omit [FloatOps F] [Named F] in
theorem pts_iV (q : PosShare TreeShare) (f : Buf (Elt F) (iLoc d)) :
    ((iV : Memref sig .scVector .hbm S262144 .i32).view.loc (thr d L) ↦{q} f : sProp 𝕄) = iLoc d ↦{q} f := rfl
omit [FloatOps F] [Named F] in
theorem pts_tV (q : PosShare TreeShare) (f : Buf (Elt F) (tLoc d)) :
    ((tV : Memref sig .scVector .hbm S507904x128 .f32).view.loc (thr d L) ↦{q} f : sProp 𝕄) = tLoc d ↦{q} f := rfl
omit [FloatOps F] [Named F] in
theorem pts_s0 (f : Buf (Elt F) ((thr d L).loc cc1_scratch0)) :
    ((sIdx : Memref sig .scVector .vmem S2048 .i32).view.loc (thr d L) ↦{fullShare} f : sProp 𝕄) = (thr d L).loc cc1_scratch0 ↦{fullShare} f := rfl
omit [FloatOps F] [Named F] in
theorem pts_s1 (f : Buf (Elt F) ((thr d L).loc cc1_scratch1)) :
    ((sTix : Memref sig .scVector .vmem S2048 .i32).view.loc (thr d L) ↦{fullShare} f : sProp 𝕄) = (thr d L).loc cc1_scratch1 ↦{fullShare} f := rfl
omit [FloatOps F] [Named F] in
theorem pts_s2 (f : Buf (Elt F) ((thr d L).loc cc1_scratch2)) :
    ((sRv : Memref sig .scVector .vmem S2048 .i32).view.loc (thr d L) ↦{fullShare} f : sProp 𝕄) = (thr d L).loc cc1_scratch2 ↦{fullShare} f := rfl
omit [FloatOps F] [Named F] in
theorem pts_s3 (f : Buf (Elt F) ((thr d L).loc cc1_scratch3)) :
    ((sRows : Memref sig .scVector .vmem S2x50x128 .f32).view.loc (thr d L) ↦{fullShare} f : sProp 𝕄) = (thr d L).loc cc1_scratch3 ↦{fullShare} f := rfl
omit [FloatOps F] [Named F] in
theorem pts_s4 (f : Buf (Elt F) ((thr d L).loc cc1_scratch4)) :
    ((sWb : Memref sig .scVector .vmem S2x16x64 .f32).view.loc (thr d L) ↦{fullShare} f : sProp 𝕄) = (thr d L).loc cc1_scratch4 ↦{fullShare} f := rfl

end Tile

/-- The task: the kernel's body on the subcore at `L`, from what the task is handed to what it hands back, for any shares
    of the two inputs, any flat index array whose words are vocabulary indices, any recorded waits and any debt with nothing
    owed at the kernels' index. -/
def TileBody (PK : FVec F Spec.STab .f32 → Prop) : Prop :=
  ∀ (d : Dev nD) (L : grid1.Coords) (fl : IVec Spec.SFlat 32), (∀ n, (fl n).toNat ≤ 999999) → ∀ (qi qt : PosShare TreeShare)
    (O : CellTallies nD τ sig (HIx 1)) (W : Waits sig (HIx 1)), (∀ g, O g none = 0) →
    iprop(levAts (K (F := F)).L (K (F := F)).lev ∗ emp ∗ goA PK fl qi qt d (wL L)
        ∗ scopedBufs (thr d L) ∗ scopedSems0 (thr d L) ∗ owes (thr d L) O W)
      ⊢ wp frame (wpE (defs₀ (F := F)) 𝒱₀ (thr d L) none) Set.univ
          (cc1__sc_bag_sum_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10)
          fun _ => iprop(tdA PK fl qi qt d (wL L) ∗ scopedBufs (thr d L) ∗ scopedSems0 (thr d L)
            ∗ ∃ W', ⌜∀ p ∈ W', p ∈ W ∨ p.2 = none⌝ ∗ owes (thr d L) O W')

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ⟨⟩
      = SparseCore.onTile hcore1 hsub1 (fun c s => cc1__sc_bag_sum_body (coordsV c s)
          iV (Memref.isWhole_whole _) tV (Memref.isWhole_whole _) oV (Memref.isWhole_whole _)
          sIdx (Memref.isWhole_whole _) sTix (Memref.isWhole_whole _) sRv (Memref.isWhole_whole _)
          sRows (Memref.isWhole_whole _) sWb (Memref.isWhole_whole _)
          cc1_scratch5 cc1_scratch6 cc1_scratch7 cc1_scratch8 cc1_scratch9 cc1_scratch10) ⟨⟩ c s := rfl

omit [FloatOps F] [Named F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (m : (ℓ : Loc nD τ sig) → Buf (Elt F) ℓ) (PK : FVec F Spec.STab .f32 → Prop)

theorem wid_coords (c : Fin ((K (F := F)).nCore 0)) (i : Fin ((K (F := F)).nSub 0))
    (hc : ((K (F := F)).core 0 c).val < grid1.bound 0) (hi : ((K (F := F)).sub 0 i).val < grid1.bound 1) :
    widN c.val i.val = wL (coordsV ⟨_, hc⟩ ⟨_, hi⟩) :=
  widN_eq (Fin.cast nCore_zero c) (Fin.cast nSub_zero i)

/-- The launch theorem's obligation for the bag-sum kernel's tiles, from the task. -/
theorem tileObl_of_body (hb : TileBody (F := F) PK) (hfl : ∀ d n, (flatM m d n).toNat ≤ 999999) :
    (K (F := F)).TileObl (D (F := F)) 𝒱 (P m PK) v₀ 0 := by
  intro d c i O W hO _ _
  simp only [show (P m PK).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hgo : (P m PK).go 0 d c i = goA PK (flatM m d) (qT c.val i.val) (qT c.val i.val) d (wL (coordsV ⟨_, hc.1⟩ ⟨_, hc.2⟩)) := by
    show goA PK (flatM m d) _ _ d (widN c.val i.val) = _
    rw [wid_coords c i hc.1 hc.2]
  have htd : (P m PK).td 0 d c i = tdA PK (flatM m d) (qT c.val i.val) (qT c.val i.val) d (wL (coordsV ⟨_, hc.1⟩ ⟨_, hc.2⟩)) := by
    show tdA PK (flatM m d) _ _ d (widN c.val i.val) = _
    rw [wid_coords c i hc.1 hc.2]
  rw [hgo, htd]
  exact (hb d (coordsV ⟨_, hc.1⟩ ⟨_, hc.2⟩) (flatM m d) (hfl d) _ _ O W hO).trans (wp_mono frame _ _ fun _ => obl_post)

end Cert.Proof.Bag

end
-- ==== Proof.HostVals.lean ====
/-
  The host operations around the kernels, read at an index: the index array padded from 50 to 64 words a bag and
  flattened is the flat padded index array; the transposed embedding table reads the table with its coordinates
  exchanged; a bias reshaped to one row reads the bias; the relaid table of rank 4 reshaped to rank 2 reads, at row `r`,
  block `r / 16384`, slab `r / 64 % 256`, row `r % 64` of the slab.
-/
import proofs.«203835_g19404662243951_cont_8to1_399_35_alg».proof.Proof.Spec
import Idealize.ShloMosaic.Lib.KernelVsHost

namespace Cert.Proof.HostVals

open Idealize.ShloMosaic Idealize.ShloMosaic.ValueIdx Cert.Proof.Spec

/-! ## Padding and flattening the index array -/

/-- The padded index array at `(b, j)`: the index array's entry for `j < 50`, the padding value beyond. -/
theorem pad_read (idx : IVec SIdx 32) {u : Shape} (v : u.Idx → BitVec 32)
    (hp : SIdx.Pads (![0, 0] : Fin 2 → Nat) ![0, 14] ![0, 0] SPad) (hu : 0 < u.numel) (b : Fin 4096) (j : Fin 64) :
    pad SPad ![0, 0] ![0, 14] ![0, 0] idx v hp hu (ix2 b j)
      = if h : j.val < 50 then idx (ix2 b ⟨j.val, h⟩) else v (Shape.Idx.first hu) := by
  split
  · rename_i h
    refine pad_apply_of_inside _ _ _ idx v hp hu (ix2 b j) (ix2 b ⟨j.val, h⟩) fun a => ?_
    match a with
    | ⟨0, _⟩ => show b.val = 0 + b.val * (0 + 1); omega
    | ⟨1, _⟩ => show j.val = 0 + j.val * (0 + 1); omega
  · rename_i h
    refine pad_apply_of_not_inside _ _ _ idx v hp hu (ix2 b j) ⟨1, by decide⟩ ?_
    show ¬(0 ≤ j.val ∧ (j.val - 0) % (0 + 1) = 0 ∧ (j.val - 0) / (0 + 1) < 50)
    omega

/-- Padded with a value that is zero and flattened, the index array is the flat padded index array. -/
theorem flat_eq_of (idx : IVec SIdx 32) {u : Shape} (v : u.Idx → BitVec 32) (hv : ∀ k, v k = 0#32)
    (hp : SIdx.Pads (![0, 0] : Fin 2 → Nat) ![0, 14] ![0, 0] SPad) (hu : 0 < u.numel) (hc : SPad.ShapeCasts SFlat) :
    shapeCast SFlat (pad SPad ![0, 0] ![0, 14] ![0, 0] idx v hp hu) hc = flatOf idx := by
  funext i
  have hi : (i 0).val < 262144 := (i 0).isLt
  refine (shapeCast_apply _ hc i (ix2 ⟨(i 0).val / 64, by omega⟩ ⟨(i 0).val % 64, Nat.mod_lt _ (by decide)⟩) ?_).trans ?_
  · rw [Shape.rowMajor_val_two, Shape.rowMajor_val_one]
    show (i 0).val / 64 * 64 + (i 0).val % 64 = (i 0).val
    omega
  · rw [pad_read]
    unfold flatOf
    split
    · rfl
    · exact hv _

/-- As the program spells it: the padding value is the constant zero, converted. -/
theorem flat_eq (idx : IVec SIdx 32)
    (hp : SIdx.Pads (![0, 0] : Fin 2 → Nat) ![0, 14] ![0, 0] SPad) (hu : 0 < (⟨0, ![]⟩ : Shape).numel) (hc : SPad.ShapeCasts SFlat) :
    shapeCast SFlat (pad SPad ![0, 0] ![0, 14] ![0, 0] idx (id (constantI ⟨0, ![]⟩ 32 0#32)) hp hu) hc = flatOf idx :=
  flat_eq_of idx _ (fun _ => rfl) hp hu hc

/-! ## The transposed table and the reshaped biases -/

variable {α : Type}

/-- The transposed embedding table at `(c, v)` is the table at `(v, c)`. -/
theorem transpose_read (emb : SEmb.Idx → α) (ht : SEmb.Transposes [1, 0] ⟨2, ![64, 1000000]⟩) (c : Fin 64) (v : Fin 1000000) :
    transpose ⟨2, ![64, 1000000]⟩ [1, 0] emb ht (ix2 c v) = emb (ix2 v c) := by
  refine transpose_apply _ emb ht (ix2 c v) (ix2 v c) fun b => ?_
  match b with
  | ⟨0, _⟩ => rfl
  | ⟨1, _⟩ => rfl

/-- A vector reshaped to one row reads the vector. -/
theorem row_read {n : Nat} (x : (⟨1, ![n]⟩ : Shape).Idx → α) (hc : (⟨1, ![n]⟩ : Shape).ShapeCasts ⟨2, ![1, n]⟩) (j : Fin n) :
    shapeCast ⟨2, ![1, n]⟩ x hc (ix2 (0 : Fin 1) j) = x (ix1 j) := by
  refine shapeCast_apply x hc (ix2 (0 : Fin 1) j) (ix1 j) ?_
  rw [Shape.rowMajor_val_two, Shape.rowMajor_val_one]
  show j.val = 0 * n + j.val
  omega

/-! ## The relaid table from rank 4 to rank 2 -/

/-- Row `r` of the relaid table is row `r % 64` of slab `r / 64 % 256` of block `r / 16384`. -/
theorem tab_read (f : (⟨4, ![31, 256, 64, 128]⟩ : Shape).Idx → α) (hc : (⟨4, ![31, 256, 64, 128]⟩ : Shape).ShapeCasts STab)
    (r : Fin 507904) (c : Fin 128) :
    shapeCast STab f hc (ix2 r c)
      = f (ix4 (⟨r.val / 16384, by have := r.isLt; omega⟩ : Fin 31) (⟨r.val / 64 % 256, Nat.mod_lt _ (by decide)⟩ : Fin 256)
          (⟨r.val % 64, Nat.mod_lt _ (by decide)⟩ : Fin 64) c) := by
  refine shapeCast_apply f hc (ix2 r c) _ ?_
  rw [Shape.rowMajor_val_two, Shape.rowMajor_val_four]
  show ((r.val / 16384 * 256 + r.val / 64 % 256) * 64 + r.val % 64) * 128 + c.val = r.val * 128 + c.val
  have := r.isLt
  omega

end Cert.Proof.HostVals
-- ==== Proof.PackOut.lean ====
/-
  What the packing body leaves in its output block, entry by entry: sub-block `s`, row `r`, column `q` of the
  block is entry `(128 s + r + 64 (q / 64), q % 64)` of the transposing product.
-/
import proofs.«203835_g19404662243951_cont_8to1_399_35_alg».proof.Proof.PackBody
import Idealize.ShloMosaic.Lib.ValueIdx
import Idealize.ShloMosaic.Lib.Writes
import Idealize.ShloMosaic.Lib.Pipeline.Value

noncomputable section

namespace Cert.Proof.Pack

open Cert.KernelIdeal Cert.KernelIdeal.Gen

open Idealize.ShloMosaic Idealize.ShloMosaic.ValueIdx
open Idealize.ShloMosaic.TcCoe
open Idealize.SL Idealize.SL.RA Idealize.SL.BI Idealize.SL.Sem

variable {F : FTy → Type} [FloatOps F] [Named F]

/-- The output block in closed form over the transposing product `v9`. -/
def outOf (v9 : FVec F S32768x64 .f32) : S1x256x64x128.Idx → Elt F .f32 := fun y =>
  v9 (ix2 ⟨128 * (y 1).val + (y 2).val + 64 * ((y 3).val / 64), by
        have h1 : (y 1).val < 256 := (y 1).isLt
        have h2 : (y 2).val < 64 := (y 2).isLt
        have h3 : (y 3).val < 128 := (y 3).isLt
        omega⟩
      ⟨(y 3).val % 64, Nat.mod_lt _ (by decide)⟩)

/-- One store's payload — the 64 x 64 piece of the product at row offset `128 s + q` — is the closed form on the
    store's rectangle, sub-block `s` at column offset `q` (0 or 64). -/
theorem piece_ok (v9 : FVec F S32768x64 .f32) (s q : ℕ) (hs : s < 256) (hq : q = 0 ∨ q = 64)
    (inb : ∀ a, (![0, s, 0, q] : Fin 4 → ℕ) a + S1x1x64x64.size a ≤ S1x256x64x128.size a)
    (hsl : S32768x64.Slices ![128 * s + q, 0] S64x64) (hc : S64x64.ShapeCasts S1x1x64x64) (x : S1x1x64x64.Idx) :
    shapeCast S1x1x64x64 (extractStridedSlice S64x64 ![128 * s + q, 0] v9 hsl) hc x
      = outOf v9 ((Rect.unit (s := S1x256x64x128) ![0, s, 0, q] S1x1x64x64.size inb).emb x) := by
  have h0 : (x 0).val = 0 := by have : (x 0).val < 1 := (x 0).isLt; omega
  have h1 : (x 1).val = 0 := by have : (x 1).val < 1 := (x 1).isLt; omega
  have h2 : (x 2).val < 64 := (x 2).isLt
  have h3 : (x 3).val < 64 := (x 3).isLt
  have hre : Shape.reshapeEquiv hc x = ix2 ⟨(x 2).val, h2⟩ ⟨(x 3).val, h3⟩ :=
    Shape.reshapeEquiv_eq_of_rowMajor hc (by
      rw [Shape.rowMajor_val_two, Shape.rowMajor_val_four, h0, h1]
      show (x 2).val * 64 + (x 3).val = ((0 * 1 + 0) * 64 + (x 2).val) * 64 + (x 3).val
      omega)
  unfold shapeCast extractStridedSlice outOf
  rw [hre]
  congr 1
  funext a
  apply Fin.ext
  match a with
  | ⟨0, _⟩ =>
    show 128 * s + q + (x 2).val = 128 * (s + 1 * (x 1).val) + (0 + 1 * (x 2).val) + 64 * ((q + 1 * (x 3).val) / 64)
    rcases hq with rfl | rfl <;> omega
  | ⟨1, _⟩ =>
    show 0 + (x 3).val = (q + 1 * (x 3).val) % 64
    rcases hq with rfl | rfl <;> omega

theorem pieces_5 (c : Dev nD) (M0 : Memref sig .tc .vmem S64x32768 .f32) (f0 : Bf (F := F) c M0) :
    ∀ p ∈ packRun.sl.H1_5 c M0 f0, ∀ x : p.1.shape.Idx, p.2 x = outOf (packRun.sl.v9 c M0 f0) (p.1.emb x) :=
  List.forall_mem_cons.mpr ⟨fun x => piece_ok _ 2 0 (by decide) (by decide) (by decide) (by decide) (by decide) x,
    List.forall_mem_cons.mpr ⟨fun x => piece_ok _ 1 64 (by decide) (by decide) (by decide) (by decide) (by decide) x,
    List.forall_mem_cons.mpr ⟨fun x => piece_ok _ 1 0 (by decide) (by decide) (by decide) (by decide) (by decide) x,
    List.forall_mem_cons.mpr ⟨fun x => piece_ok _ 0 64 (by decide) (by decide) (by decide) (by decide) (by decide) x,
    List.forall_mem_cons.mpr ⟨fun x => piece_ok _ 0 0 (by decide) (by decide) (by decide) (by decide) (by decide) x,
    fun p hp => absurd hp List.not_mem_nil⟩⟩⟩⟩⟩

theorem pieces_11 (c : Dev nD) (M0 : Memref sig .tc .vmem S64x32768 .f32) (f0 : Bf (F := F) c M0) :
    ∀ p ∈ packRun.sl.H1_11 c M0 f0, ∀ x : p.1.shape.Idx, p.2 x = outOf (packRun.sl.v9 c M0 f0) (p.1.emb x) :=
  List.forall_mem_cons.mpr ⟨fun x => piece_ok _ 5 0 (by decide) (by decide) (by decide) (by decide) (by decide) x,
    List.forall_mem_cons.mpr ⟨fun x => piece_ok _ 4 64 (by decide) (by decide) (by decide) (by decide) (by decide) x,
    List.forall_mem_cons.mpr ⟨fun x => piece_ok _ 4 0 (by decide) (by decide) (by decide) (by decide) (by decide) x,
    List.forall_mem_cons.mpr ⟨fun x => piece_ok _ 3 64 (by decide) (by decide) (by decide) (by decide) (by decide) x,
    List.forall_mem_cons.mpr ⟨fun x => piece_ok _ 3 0 (by decide) (by decide) (by decide) (by decide) (by decide) x,
    List.forall_mem_cons.mpr ⟨fun x => piece_ok _ 2 64 (by decide) (by decide) (by decide) (by decide) (by decide) x,
    pieces_5 c M0 f0⟩⟩⟩⟩⟩⟩

theorem pieces_18 (c : Dev nD) (M0 : Memref sig .tc .vmem S64x32768 .f32) (f0 : Bf (F := F) c M0) :
    ∀ p ∈ packRun.sl.H1_18 c M0 f0, ∀ x : p.1.shape.Idx, p.2 x = outOf (packRun.sl.v9 c M0 f0) (p.1.emb x) :=
  List.forall_mem_cons.mpr ⟨fun x => piece_ok _ 8 64 (by decide) (by decide) (by decide) (by decide) (by decide) x,
    List.forall_mem_cons.mpr ⟨fun x => piece_ok _ 8 0 (by decide) (by decide) (by decide) (by decide) (by decide) x,
    List.forall_mem_cons.mpr ⟨fun x => piece_ok _ 7 64 (by decide) (by decide) (by decide) (by decide) (by decide) x,
    List.forall_mem_cons.mpr ⟨fun x => piece_ok _ 7 0 (by decide) (by decide) (by decide) (by decide) (by decide) x,
    List.forall_mem_cons.mpr ⟨fun x => piece_ok _ 6 64 (by decide) (by decide) (by decide) (by decide) (by decide) x,
    List.forall_mem_cons.mpr ⟨fun x => piece_ok _ 6 0 (by decide) (by decide) (by decide) (by decide) (by decide) x,
    List.forall_mem_cons.mpr ⟨fun x => piece_ok _ 5 64 (by decide) (by decide) (by decide) (by decide) (by decide) x,
    pieces_11 c M0 f0⟩⟩⟩⟩⟩⟩⟩

theorem pieces_25 (c : Dev nD) (M0 : Memref sig .tc .vmem S64x32768 .f32) (f0 : Bf (F := F) c M0) :
    ∀ p ∈ packRun.sl.H1_25 c M0 f0, ∀ x : p.1.shape.Idx, p.2 x = outOf (packRun.sl.v9 c M0 f0) (p.1.emb x) :=
  List.forall_mem_cons.mpr ⟨fun x => piece_ok _ 12 0 (by decide) (by decide) (by decide) (by decide) (by decide) x,
    List.forall_mem_cons.mpr ⟨fun x => piece_ok _ 11 64 (by decide) (by decide) (by decide) (by decide) (by decide) x,
    List.forall_mem_cons.mpr ⟨fun x => piece_ok _ 11 0 (by decide) (by decide) (by decide) (by decide) (by decide) x,
    List.forall_mem_cons.mpr ⟨fun x => piece_ok _ 10 64 (by decide) (by decide) (by decide) (by decide) (by decide) x,
    List.forall_mem_cons.mpr ⟨fun x => piece_ok _ 10 0 (by decide) (by decide) (by decide) (by decide) (by decide) x,
    List.forall_mem_cons.mpr ⟨fun x => piece_ok _ 9 64 (by decide) (by decide) (by decide) (by decide) (by decide) x,
    List.forall_mem_cons.mpr ⟨fun x => piece_ok _ 9 0 (by decide) (by decide) (by decide) (by decide) (by decide) x,
    pieces_18 c M0 f0⟩⟩⟩⟩⟩⟩⟩

theorem pieces_31 (c : Dev nD) (M0 : Memref sig .tc .vmem S64x32768 .f32) (f0 : Bf (F := F) c M0) :
    ∀ p ∈ packRun.sl.H1_31 c M0 f0, ∀ x : p.1.shape.Idx, p.2 x = outOf (packRun.sl.v9 c M0 f0) (p.1.emb x) :=
  List.forall_mem_cons.mpr ⟨fun x => piece_ok _ 15 0 (by decide) (by decide) (by decide) (by decide) (by decide) x,
    List.forall_mem_cons.mpr ⟨fun x => piece_ok _ 14 64 (by decide) (by decide) (by decide) (by decide) (by decide) x,
    List.forall_mem_cons.mpr ⟨fun x => piece_ok _ 14 0 (by decide) (by decide) (by decide) (by decide) (by decide) x,
    List.forall_mem_cons.mpr ⟨fun x => piece_ok _ 13 64 (by decide) (by decide) (by decide) (by decide) (by decide) x,
    List.forall_mem_cons.mpr ⟨fun x => piece_ok _ 13 0 (by decide) (by decide) (by decide) (by decide) (by decide) x,
    List.forall_mem_cons.mpr ⟨fun x => piece_ok _ 12 64 (by decide) (by decide) (by decide) (by decide) (by decide) x,
    pieces_25 c M0 f0⟩⟩⟩⟩⟩⟩

theorem pieces_38 (c : Dev nD) (M0 : Memref sig .tc .vmem S64x32768 .f32) (f0 : Bf (F := F) c M0) :
    ∀ p ∈ packRun.sl.H1_38 c M0 f0, ∀ x : p.1.shape.Idx, p.2 x = outOf (packRun.sl.v9 c M0 f0) (p.1.emb x) :=
  List.forall_mem_cons.mpr ⟨fun x => piece_ok _ 18 64 (by decide) (by decide) (by decide) (by decide) (by decide) x,
    List.forall_mem_cons.mpr ⟨fun x => piece_ok _ 18 0 (by decide) (by decide) (by decide) (by decide) (by decide) x,
    List.forall_mem_cons.mpr ⟨fun x => piece_ok _ 17 64 (by decide) (by decide) (by decide) (by decide) (by decide) x,
    List.forall_mem_cons.mpr ⟨fun x => piece_ok _ 17 0 (by decide) (by decide) (by decide) (by decide) (by decide) x,
    List.forall_mem_cons.mpr ⟨fun x => piece_ok _ 16 64 (by decide) (by decide) (by decide) (by decide) (by decide) x,
    List.forall_mem_cons.mpr ⟨fun x => piece_ok _ 16 0 (by decide) (by decide) (by decide) (by decide) (by decide) x,
    List.forall_mem_cons.mpr ⟨fun x => piece_ok _ 15 64 (by decide) (by decide) (by decide) (by decide) (by decide) x,
    pieces_31 c M0 f0⟩⟩⟩⟩⟩⟩⟩

theorem pieces_45 (c : Dev nD) (M0 : Memref sig .tc .vmem S64x32768 .f32) (f0 : Bf (F := F) c M0) :
    ∀ p ∈ packRun.sl.H1_45 c M0 f0, ∀ x : p.1.shape.Idx, p.2 x = outOf (packRun.sl.v9 c M0 f0) (p.1.emb x) :=
  List.forall_mem_cons.mpr ⟨fun x => piece_ok _ 22 0 (by decide) (by decide) (by decide) (by decide) (by decide) x,
    List.forall_mem_cons.mpr ⟨fun x => piece_ok _ 21 64 (by decide) (by decide) (by decide) (by decide) (by decide) x,
    List.forall_mem_cons.mpr ⟨fun x => piece_ok _ 21 0 (by decide) (by decide) (by decide) (by decide) (by decide) x,
    List.forall_mem_cons.mpr ⟨fun x => piece_ok _ 20 64 (by decide) (by decide) (by decide) (by decide) (by decide) x,
    List.forall_mem_cons.mpr ⟨fun x => piece_ok _ 20 0 (by decide) (by decide) (by decide) (by decide) (by decide) x,
    List.forall_mem_cons.mpr ⟨fun x => piece_ok _ 19 64 (by decide) (by decide) (by decide) (by decide) (by decide) x,
    List.forall_mem_cons.mpr ⟨fun x => piece_ok _ 19 0 (by decide) (by decide) (by decide) (by decide) (by decide) x,
    pieces_38 c M0 f0⟩⟩⟩⟩⟩⟩⟩

theorem pieces_51 (c : Dev nD) (M0 : Memref sig .tc .vmem S64x32768 .f32) (f0 : Bf (F := F) c M0) :
    ∀ p ∈ packRun.sl.H1_51 c M0 f0, ∀ x : p.1.shape.Idx, p.2 x = outOf (packRun.sl.v9 c M0 f0) (p.1.emb x) :=
  List.forall_mem_cons.mpr ⟨fun x => piece_ok _ 25 0 (by decide) (by decide) (by decide) (by decide) (by decide) x,
    List.forall_mem_cons.mpr ⟨fun x => piece_ok _ 24 64 (by decide) (by decide) (by decide) (by decide) (by decide) x,
    List.forall_mem_cons.mpr ⟨fun x => piece_ok _ 24 0 (by decide) (by decide) (by decide) (by decide) (by decide) x,
    List.forall_mem_cons.mpr ⟨fun x => piece_ok _ 23 64 (by decide) (by decide) (by decide) (by decide) (by decide) x,
    List.forall_mem_cons.mpr ⟨fun x => piece_ok _ 23 0 (by decide) (by decide) (by decide) (by decide) (by decide) x,
    List.forall_mem_cons.mpr ⟨fun x => piece_ok _ 22 64 (by decide) (by decide) (by decide) (by decide) (by decide) x,
    pieces_45 c M0 f0⟩⟩⟩⟩⟩⟩

theorem pieces_58 (c : Dev nD) (M0 : Memref sig .tc .vmem S64x32768 .f32) (f0 : Bf (F := F) c M0) :
    ∀ p ∈ packRun.sl.H1_58 c M0 f0, ∀ x : p.1.shape.Idx, p.2 x = outOf (packRun.sl.v9 c M0 f0) (p.1.emb x) :=
  List.forall_mem_cons.mpr ⟨fun x => piece_ok _ 28 64 (by decide) (by decide) (by decide) (by decide) (by decide) x,
    List.forall_mem_cons.mpr ⟨fun x => piece_ok _ 28 0 (by decide) (by decide) (by decide) (by decide) (by decide) x,
    List.forall_mem_cons.mpr ⟨fun x => piece_ok _ 27 64 (by decide) (by decide) (by decide) (by decide) (by decide) x,
    List.forall_mem_cons.mpr ⟨fun x => piece_ok _ 27 0 (by decide) (by decide) (by decide) (by decide) (by decide) x,
    List.forall_mem_cons.mpr ⟨fun x => piece_ok _ 26 64 (by decide) (by decide) (by decide) (by decide) (by decide) x,
    List.forall_mem_cons.mpr ⟨fun x => piece_ok _ 26 0 (by decide) (by decide) (by decide) (by decide) (by decide) x,
    List.forall_mem_cons.mpr ⟨fun x => piece_ok _ 25 64 (by decide) (by decide) (by decide) (by decide) (by decide) x,
    pieces_51 c M0 f0⟩⟩⟩⟩⟩⟩⟩

theorem pieces_65 (c : Dev nD) (M0 : Memref sig .tc .vmem S64x32768 .f32) (f0 : Bf (F := F) c M0) :
    ∀ p ∈ packRun.sl.H1_65 c M0 f0, ∀ x : p.1.shape.Idx, p.2 x = outOf (packRun.sl.v9 c M0 f0) (p.1.emb x) :=
  List.forall_mem_cons.mpr ⟨fun x => piece_ok _ 32 0 (by decide) (by decide) (by decide) (by decide) (by decide) x,
    List.forall_mem_cons.mpr ⟨fun x => piece_ok _ 31 64 (by decide) (by decide) (by decide) (by decide) (by decide) x,
    List.forall_mem_cons.mpr ⟨fun x => piece_ok _ 31 0 (by decide) (by decide) (by decide) (by decide) (by decide) x,
    List.forall_mem_cons.mpr ⟨fun x => piece_ok _ 30 64 (by decide) (by decide) (by decide) (by decide) (by decide) x,
    List.forall_mem_cons.mpr ⟨fun x => piece_ok _ 30 0 (by decide) (by decide) (by decide) (by decide) (by decide) x,
    List.forall_mem_cons.mpr ⟨fun x => piece_ok _ 29 64 (by decide) (by decide) (by decide) (by decide) (by decide) x,
    List.forall_mem_cons.mpr ⟨fun x => piece_ok _ 29 0 (by decide) (by decide) (by decide) (by decide) (by decide) x,
    pieces_58 c M0 f0⟩⟩⟩⟩⟩⟩⟩

theorem pieces_71 (c : Dev nD) (M0 : Memref sig .tc .vmem S64x32768 .f32) (f0 : Bf (F := F) c M0) :
    ∀ p ∈ packRun.sl.H1_71 c M0 f0, ∀ x : p.1.shape.Idx, p.2 x = outOf (packRun.sl.v9 c M0 f0) (p.1.emb x) :=
  List.forall_mem_cons.mpr ⟨fun x => piece_ok _ 35 0 (by decide) (by decide) (by decide) (by decide) (by decide) x,
    List.forall_mem_cons.mpr ⟨fun x => piece_ok _ 34 64 (by decide) (by decide) (by decide) (by decide) (by decide) x,
    List.forall_mem_cons.mpr ⟨fun x => piece_ok _ 34 0 (by decide) (by decide) (by decide) (by decide) (by decide) x,
    List.forall_mem_cons.mpr ⟨fun x => piece_ok _ 33 64 (by decide) (by decide) (by decide) (by decide) (by decide) x,
    List.forall_mem_cons.mpr ⟨fun x => piece_ok _ 33 0 (by decide) (by decide) (by decide) (by decide) (by decide) x,
    List.forall_mem_cons.mpr ⟨fun x => piece_ok _ 32 64 (by decide) (by decide) (by decide) (by decide) (by decide) x,
    pieces_65 c M0 f0⟩⟩⟩⟩⟩⟩

theorem pieces_78 (c : Dev nD) (M0 : Memref sig .tc .vmem S64x32768 .f32) (f0 : Bf (F := F) c M0) :
    ∀ p ∈ packRun.sl.H1_78 c M0 f0, ∀ x : p.1.shape.Idx, p.2 x = outOf (packRun.sl.v9 c M0 f0) (p.1.emb x) :=
  List.forall_mem_cons.mpr ⟨fun x => piece_ok _ 38 64 (by decide) (by decide) (by decide) (by decide) (by decide) x,
    List.forall_mem_cons.mpr ⟨fun x => piece_ok _ 38 0 (by decide) (by decide) (by decide) (by decide) (by decide) x,
    List.forall_mem_cons.mpr ⟨fun x => piece_ok _ 37 64 (by decide) (by decide) (by decide) (by decide) (by decide) x,
    List.forall_mem_cons.mpr ⟨fun x => piece_ok _ 37 0 (by decide) (by decide) (by decide) (by decide) (by decide) x,
    List.forall_mem_cons.mpr ⟨fun x => piece_ok _ 36 64 (by decide) (by decide) (by decide) (by decide) (by decide) x,
    List.forall_mem_cons.mpr ⟨fun x => piece_ok _ 36 0 (by decide) (by decide) (by decide) (by decide) (by decide) x,
    List.forall_mem_cons.mpr ⟨fun x => piece_ok _ 35 64 (by decide) (by decide) (by decide) (by decide) (by decide) x,
    pieces_71 c M0 f0⟩⟩⟩⟩⟩⟩⟩

theorem pieces_85 (c : Dev nD) (M0 : Memref sig .tc .vmem S64x32768 .f32) (f0 : Bf (F := F) c M0) :
    ∀ p ∈ packRun.sl.H1_85 c M0 f0, ∀ x : p.1.shape.Idx, p.2 x = outOf (packRun.sl.v9 c M0 f0) (p.1.emb x) :=
  List.forall_mem_cons.mpr ⟨fun x => piece_ok _ 42 0 (by decide) (by decide) (by decide) (by decide) (by decide) x,
    List.forall_mem_cons.mpr ⟨fun x => piece_ok _ 41 64 (by decide) (by decide) (by decide) (by decide) (by decide) x,
    List.forall_mem_cons.mpr ⟨fun x => piece_ok _ 41 0 (by decide) (by decide) (by decide) (by decide) (by decide) x,
    List.forall_mem_cons.mpr ⟨fun x => piece_ok _ 40 64 (by decide) (by decide) (by decide) (by decide) (by decide) x,
    List.forall_mem_cons.mpr ⟨fun x => piece_ok _ 40 0 (by decide) (by decide) (by decide) (by decide) (by decide) x,
    List.forall_mem_cons.mpr ⟨fun x => piece_ok _ 39 64 (by decide) (by decide) (by decide) (by decide) (by decide) x,
    List.forall_mem_cons.mpr ⟨fun x => piece_ok _ 39 0 (by decide) (by decide) (by decide) (by decide) (by decide) x,
    pieces_78 c M0 f0⟩⟩⟩⟩⟩⟩⟩

theorem pieces_91 (c : Dev nD) (M0 : Memref sig .tc .vmem S64x32768 .f32) (f0 : Bf (F := F) c M0) :
    ∀ p ∈ packRun.sl.H1_91 c M0 f0, ∀ x : p.1.shape.Idx, p.2 x = outOf (packRun.sl.v9 c M0 f0) (p.1.emb x) :=
  List.forall_mem_cons.mpr ⟨fun x => piece_ok _ 45 0 (by decide) (by decide) (by decide) (by decide) (by decide) x,
    List.forall_mem_cons.mpr ⟨fun x => piece_ok _ 44 64 (by decide) (by decide) (by decide) (by decide) (by decide) x,
    List.forall_mem_cons.mpr ⟨fun x => piece_ok _ 44 0 (by decide) (by decide) (by decide) (by decide) (by decide) x,
    List.forall_mem_cons.mpr ⟨fun x => piece_ok _ 43 64 (by decide) (by decide) (by decide) (by decide) (by decide) x,
    List.forall_mem_cons.mpr ⟨fun x => piece_ok _ 43 0 (by decide) (by decide) (by decide) (by decide) (by decide) x,
    List.forall_mem_cons.mpr ⟨fun x => piece_ok _ 42 64 (by decide) (by decide) (by decide) (by decide) (by decide) x,
    pieces_85 c M0 f0⟩⟩⟩⟩⟩⟩

theorem pieces_98 (c : Dev nD) (M0 : Memref sig .tc .vmem S64x32768 .f32) (f0 : Bf (F := F) c M0) :
    ∀ p ∈ packRun.sl.H1_98 c M0 f0, ∀ x : p.1.shape.Idx, p.2 x = outOf (packRun.sl.v9 c M0 f0) (p.1.emb x) :=
  List.forall_mem_cons.mpr ⟨fun x => piece_ok _ 48 64 (by decide) (by decide) (by decide) (by decide) (by decide) x,
    List.forall_mem_cons.mpr ⟨fun x => piece_ok _ 48 0 (by decide) (by decide) (by decide) (by decide) (by decide) x,
    List.forall_mem_cons.mpr ⟨fun x => piece_ok _ 47 64 (by decide) (by decide) (by decide) (by decide) (by decide) x,
    List.forall_mem_cons.mpr ⟨fun x => piece_ok _ 47 0 (by decide) (by decide) (by decide) (by decide) (by decide) x,
    List.forall_mem_cons.mpr ⟨fun x => piece_ok _ 46 64 (by decide) (by decide) (by decide) (by decide) (by decide) x,
    List.forall_mem_cons.mpr ⟨fun x => piece_ok _ 46 0 (by decide) (by decide) (by decide) (by decide) (by decide) x,
    List.forall_mem_cons.mpr ⟨fun x => piece_ok _ 45 64 (by decide) (by decide) (by decide) (by decide) (by decide) x,
    pieces_91 c M0 f0⟩⟩⟩⟩⟩⟩⟩

theorem pieces_105 (c : Dev nD) (M0 : Memref sig .tc .vmem S64x32768 .f32) (f0 : Bf (F := F) c M0) :
    ∀ p ∈ packRun.sl.H1_105 c M0 f0, ∀ x : p.1.shape.Idx, p.2 x = outOf (packRun.sl.v9 c M0 f0) (p.1.emb x) :=
  List.forall_mem_cons.mpr ⟨fun x => piece_ok _ 52 0 (by decide) (by decide) (by decide) (by decide) (by decide) x,
    List.forall_mem_cons.mpr ⟨fun x => piece_ok _ 51 64 (by decide) (by decide) (by decide) (by decide) (by decide) x,
    List.forall_mem_cons.mpr ⟨fun x => piece_ok _ 51 0 (by decide) (by decide) (by decide) (by decide) (by decide) x,
    List.forall_mem_cons.mpr ⟨fun x => piece_ok _ 50 64 (by decide) (by decide) (by decide) (by decide) (by decide) x,
    List.forall_mem_cons.mpr ⟨fun x => piece_ok _ 50 0 (by decide) (by decide) (by decide) (by decide) (by decide) x,
    List.forall_mem_cons.mpr ⟨fun x => piece_ok _ 49 64 (by decide) (by decide) (by decide) (by decide) (by decide) x,
    List.forall_mem_cons.mpr ⟨fun x => piece_ok _ 49 0 (by decide) (by decide) (by decide) (by decide) (by decide) x,
    pieces_98 c M0 f0⟩⟩⟩⟩⟩⟩⟩

theorem pieces_111 (c : Dev nD) (M0 : Memref sig .tc .vmem S64x32768 .f32) (f0 : Bf (F := F) c M0) :
    ∀ p ∈ packRun.sl.H1_111 c M0 f0, ∀ x : p.1.shape.Idx, p.2 x = outOf (packRun.sl.v9 c M0 f0) (p.1.emb x) :=
  List.forall_mem_cons.mpr ⟨fun x => piece_ok _ 55 0 (by decide) (by decide) (by decide) (by decide) (by decide) x,
    List.forall_mem_cons.mpr ⟨fun x => piece_ok _ 54 64 (by decide) (by decide) (by decide) (by decide) (by decide) x,
    List.forall_mem_cons.mpr ⟨fun x => piece_ok _ 54 0 (by decide) (by decide) (by decide) (by decide) (by decide) x,
    List.forall_mem_cons.mpr ⟨fun x => piece_ok _ 53 64 (by decide) (by decide) (by decide) (by decide) (by decide) x,
    List.forall_mem_cons.mpr ⟨fun x => piece_ok _ 53 0 (by decide) (by decide) (by decide) (by decide) (by decide) x,
    List.forall_mem_cons.mpr ⟨fun x => piece_ok _ 52 64 (by decide) (by decide) (by decide) (by decide) (by decide) x,
    pieces_105 c M0 f0⟩⟩⟩⟩⟩⟩

theorem pieces_118 (c : Dev nD) (M0 : Memref sig .tc .vmem S64x32768 .f32) (f0 : Bf (F := F) c M0) :
    ∀ p ∈ packRun.sl.H1_118 c M0 f0, ∀ x : p.1.shape.Idx, p.2 x = outOf (packRun.sl.v9 c M0 f0) (p.1.emb x) :=
  List.forall_mem_cons.mpr ⟨fun x => piece_ok _ 58 64 (by decide) (by decide) (by decide) (by decide) (by decide) x,
    List.forall_mem_cons.mpr ⟨fun x => piece_ok _ 58 0 (by decide) (by decide) (by decide) (by decide) (by decide) x,
    List.forall_mem_cons.mpr ⟨fun x => piece_ok _ 57 64 (by decide) (by decide) (by decide) (by decide) (by decide) x,
    List.forall_mem_cons.mpr ⟨fun x => piece_ok _ 57 0 (by decide) (by decide) (by decide) (by decide) (by decide) x,
    List.forall_mem_cons.mpr ⟨fun x => piece_ok _ 56 64 (by decide) (by decide) (by decide) (by decide) (by decide) x,
    List.forall_mem_cons.mpr ⟨fun x => piece_ok _ 56 0 (by decide) (by decide) (by decide) (by decide) (by decide) x,
    List.forall_mem_cons.mpr ⟨fun x => piece_ok _ 55 64 (by decide) (by decide) (by decide) (by decide) (by decide) x,
    pieces_111 c M0 f0⟩⟩⟩⟩⟩⟩⟩

theorem pieces_125 (c : Dev nD) (M0 : Memref sig .tc .vmem S64x32768 .f32) (f0 : Bf (F := F) c M0) :
    ∀ p ∈ packRun.sl.H1_125 c M0 f0, ∀ x : p.1.shape.Idx, p.2 x = outOf (packRun.sl.v9 c M0 f0) (p.1.emb x) :=
  List.forall_mem_cons.mpr ⟨fun x => piece_ok _ 62 0 (by decide) (by decide) (by decide) (by decide) (by decide) x,
    List.forall_mem_cons.mpr ⟨fun x => piece_ok _ 61 64 (by decide) (by decide) (by decide) (by decide) (by decide) x,
    List.forall_mem_cons.mpr ⟨fun x => piece_ok _ 61 0 (by decide) (by decide) (by decide) (by decide) (by decide) x,
    List.forall_mem_cons.mpr ⟨fun x => piece_ok _ 60 64 (by decide) (by decide) (by decide) (by decide) (by decide) x,
    List.forall_mem_cons.mpr ⟨fun x => piece_ok _ 60 0 (by decide) (by decide) (by decide) (by decide) (by decide) x,
    List.forall_mem_cons.mpr ⟨fun x => piece_ok _ 59 64 (by decide) (by decide) (by decide) (by decide) (by decide) x,
    List.forall_mem_cons.mpr ⟨fun x => piece_ok _ 59 0 (by decide) (by decide) (by decide) (by decide) (by decide) x,
    pieces_118 c M0 f0⟩⟩⟩⟩⟩⟩⟩

theorem pieces_131 (c : Dev nD) (M0 : Memref sig .tc .vmem S64x32768 .f32) (f0 : Bf (F := F) c M0) :
    ∀ p ∈ packRun.sl.H1_131 c M0 f0, ∀ x : p.1.shape.Idx, p.2 x = outOf (packRun.sl.v9 c M0 f0) (p.1.emb x) :=
  List.forall_mem_cons.mpr ⟨fun x => piece_ok _ 65 0 (by decide) (by decide) (by decide) (by decide) (by decide) x,
    List.forall_mem_cons.mpr ⟨fun x => piece_ok _ 64 64 (by decide) (by decide) (by decide) (by decide) (by decide) x,
    List.forall_mem_cons.mpr ⟨fun x => piece_ok _ 64 0 (by decide) (by decide) (by decide) (by decide) (by decide) x,
    List.forall_mem_cons.mpr ⟨fun x => piece_ok _ 63 64 (by decide) (by decide) (by decide) (by decide) (by decide) x,
    List.forall_mem_cons.mpr ⟨fun x => piece_ok _ 63 0 (by decide) (by decide) (by decide) (by decide) (by decide) x,
    List.forall_mem_cons.mpr ⟨fun x => piece_ok _ 62 64 (by decide) (by decide) (by decide) (by decide) (by decide) x,
    pieces_125 c M0 f0⟩⟩⟩⟩⟩⟩

theorem pieces_138 (c : Dev nD) (M0 : Memref sig .tc .vmem S64x32768 .f32) (f0 : Bf (F := F) c M0) :
    ∀ p ∈ packRun.sl.H1_138 c M0 f0, ∀ x : p.1.shape.Idx, p.2 x = outOf (packRun.sl.v9 c M0 f0) (p.1.emb x) :=
  List.forall_mem_cons.mpr ⟨fun x => piece_ok _ 68 64 (by decide) (by decide) (by decide) (by decide) (by decide) x,
    List.forall_mem_cons.mpr ⟨fun x => piece_ok _ 68 0 (by decide) (by decide) (by decide) (by decide) (by decide) x,
    List.forall_mem_cons.mpr ⟨fun x => piece_ok _ 67 64 (by decide) (by decide) (by decide) (by decide) (by decide) x,
    List.forall_mem_cons.mpr ⟨fun x => piece_ok _ 67 0 (by decide) (by decide) (by decide) (by decide) (by decide) x,
    List.forall_mem_cons.mpr ⟨fun x => piece_ok _ 66 64 (by decide) (by decide) (by decide) (by decide) (by decide) x,
    List.forall_mem_cons.mpr ⟨fun x => piece_ok _ 66 0 (by decide) (by decide) (by decide) (by decide) (by decide) x,
    List.forall_mem_cons.mpr ⟨fun x => piece_ok _ 65 64 (by decide) (by decide) (by decide) (by decide) (by decide) x,
    pieces_131 c M0 f0⟩⟩⟩⟩⟩⟩⟩

theorem pieces_145 (c : Dev nD) (M0 : Memref sig .tc .vmem S64x32768 .f32) (f0 : Bf (F := F) c M0) :
    ∀ p ∈ packRun.sl.H1_145 c M0 f0, ∀ x : p.1.shape.Idx, p.2 x = outOf (packRun.sl.v9 c M0 f0) (p.1.emb x) :=
  List.forall_mem_cons.mpr ⟨fun x => piece_ok _ 72 0 (by decide) (by decide) (by decide) (by decide) (by decide) x,
    List.forall_mem_cons.mpr ⟨fun x => piece_ok _ 71 64 (by decide) (by decide) (by decide) (by decide) (by decide) x,
    List.forall_mem_cons.mpr ⟨fun x => piece_ok _ 71 0 (by decide) (by decide) (by decide) (by decide) (by decide) x,
    List.forall_mem_cons.mpr ⟨fun x => piece_ok _ 70 64 (by decide) (by decide) (by decide) (by decide) (by decide) x,
    List.forall_mem_cons.mpr ⟨fun x => piece_ok _ 70 0 (by decide) (by decide) (by decide) (by decide) (by decide) x,
    List.forall_mem_cons.mpr ⟨fun x => piece_ok _ 69 64 (by decide) (by decide) (by decide) (by decide) (by decide) x,
    List.forall_mem_cons.mpr ⟨fun x => piece_ok _ 69 0 (by decide) (by decide) (by decide) (by decide) (by decide) x,
    pieces_138 c M0 f0⟩⟩⟩⟩⟩⟩⟩

theorem pieces_151 (c : Dev nD) (M0 : Memref sig .tc .vmem S64x32768 .f32) (f0 : Bf (F := F) c M0) :
    ∀ p ∈ packRun.sl.H1_151 c M0 f0, ∀ x : p.1.shape.Idx, p.2 x = outOf (packRun.sl.v9 c M0 f0) (p.1.emb x) :=
  List.forall_mem_cons.mpr ⟨fun x => piece_ok _ 75 0 (by decide) (by decide) (by decide) (by decide) (by decide) x,
    List.forall_mem_cons.mpr ⟨fun x => piece_ok _ 74 64 (by decide) (by decide) (by decide) (by decide) (by decide) x,
    List.forall_mem_cons.mpr ⟨fun x => piece_ok _ 74 0 (by decide) (by decide) (by decide) (by decide) (by decide) x,
    List.forall_mem_cons.mpr ⟨fun x => piece_ok _ 73 64 (by decide) (by decide) (by decide) (by decide) (by decide) x,
    List.forall_mem_cons.mpr ⟨fun x => piece_ok _ 73 0 (by decide) (by decide) (by decide) (by decide) (by decide) x,
    List.forall_mem_cons.mpr ⟨fun x => piece_ok _ 72 64 (by decide) (by decide) (by decide) (by decide) (by decide) x,
    pieces_145 c M0 f0⟩⟩⟩⟩⟩⟩

theorem pieces_158 (c : Dev nD) (M0 : Memref sig .tc .vmem S64x32768 .f32) (f0 : Bf (F := F) c M0) :
    ∀ p ∈ packRun.sl.H1_158 c M0 f0, ∀ x : p.1.shape.Idx, p.2 x = outOf (packRun.sl.v9 c M0 f0) (p.1.emb x) :=
  List.forall_mem_cons.mpr ⟨fun x => piece_ok _ 78 64 (by decide) (by decide) (by decide) (by decide) (by decide) x,
    List.forall_mem_cons.mpr ⟨fun x => piece_ok _ 78 0 (by decide) (by decide) (by decide) (by decide) (by decide) x,
    List.forall_mem_cons.mpr ⟨fun x => piece_ok _ 77 64 (by decide) (by decide) (by decide) (by decide) (by decide) x,
    List.forall_mem_cons.mpr ⟨fun x => piece_ok _ 77 0 (by decide) (by decide) (by decide) (by decide) (by decide) x,
    List.forall_mem_cons.mpr ⟨fun x => piece_ok _ 76 64 (by decide) (by decide) (by decide) (by decide) (by decide) x,
    List.forall_mem_cons.mpr ⟨fun x => piece_ok _ 76 0 (by decide) (by decide) (by decide) (by decide) (by decide) x,
    List.forall_mem_cons.mpr ⟨fun x => piece_ok _ 75 64 (by decide) (by decide) (by decide) (by decide) (by decide) x,
    pieces_151 c M0 f0⟩⟩⟩⟩⟩⟩⟩

theorem pieces_165 (c : Dev nD) (M0 : Memref sig .tc .vmem S64x32768 .f32) (f0 : Bf (F := F) c M0) :
    ∀ p ∈ packRun.sl.H1_165 c M0 f0, ∀ x : p.1.shape.Idx, p.2 x = outOf (packRun.sl.v9 c M0 f0) (p.1.emb x) :=
  List.forall_mem_cons.mpr ⟨fun x => piece_ok _ 82 0 (by decide) (by decide) (by decide) (by decide) (by decide) x,
    List.forall_mem_cons.mpr ⟨fun x => piece_ok _ 81 64 (by decide) (by decide) (by decide) (by decide) (by decide) x,
    List.forall_mem_cons.mpr ⟨fun x => piece_ok _ 81 0 (by decide) (by decide) (by decide) (by decide) (by decide) x,
    List.forall_mem_cons.mpr ⟨fun x => piece_ok _ 80 64 (by decide) (by decide) (by decide) (by decide) (by decide) x,
    List.forall_mem_cons.mpr ⟨fun x => piece_ok _ 80 0 (by decide) (by decide) (by decide) (by decide) (by decide) x,
    List.forall_mem_cons.mpr ⟨fun x => piece_ok _ 79 64 (by decide) (by decide) (by decide) (by decide) (by decide) x,
    List.forall_mem_cons.mpr ⟨fun x => piece_ok _ 79 0 (by decide) (by decide) (by decide) (by decide) (by decide) x,
    pieces_158 c M0 f0⟩⟩⟩⟩⟩⟩⟩

theorem pieces_171 (c : Dev nD) (M0 : Memref sig .tc .vmem S64x32768 .f32) (f0 : Bf (F := F) c M0) :
    ∀ p ∈ packRun.sl.H1_171 c M0 f0, ∀ x : p.1.shape.Idx, p.2 x = outOf (packRun.sl.v9 c M0 f0) (p.1.emb x) :=
  List.forall_mem_cons.mpr ⟨fun x => piece_ok _ 85 0 (by decide) (by decide) (by decide) (by decide) (by decide) x,
    List.forall_mem_cons.mpr ⟨fun x => piece_ok _ 84 64 (by decide) (by decide) (by decide) (by decide) (by decide) x,
    List.forall_mem_cons.mpr ⟨fun x => piece_ok _ 84 0 (by decide) (by decide) (by decide) (by decide) (by decide) x,
    List.forall_mem_cons.mpr ⟨fun x => piece_ok _ 83 64 (by decide) (by decide) (by decide) (by decide) (by decide) x,
    List.forall_mem_cons.mpr ⟨fun x => piece_ok _ 83 0 (by decide) (by decide) (by decide) (by decide) (by decide) x,
    List.forall_mem_cons.mpr ⟨fun x => piece_ok _ 82 64 (by decide) (by decide) (by decide) (by decide) (by decide) x,
    pieces_165 c M0 f0⟩⟩⟩⟩⟩⟩

theorem pieces_178 (c : Dev nD) (M0 : Memref sig .tc .vmem S64x32768 .f32) (f0 : Bf (F := F) c M0) :
    ∀ p ∈ packRun.sl.H1_178 c M0 f0, ∀ x : p.1.shape.Idx, p.2 x = outOf (packRun.sl.v9 c M0 f0) (p.1.emb x) :=
  List.forall_mem_cons.mpr ⟨fun x => piece_ok _ 88 64 (by decide) (by decide) (by decide) (by decide) (by decide) x,
    List.forall_mem_cons.mpr ⟨fun x => piece_ok _ 88 0 (by decide) (by decide) (by decide) (by decide) (by decide) x,
    List.forall_mem_cons.mpr ⟨fun x => piece_ok _ 87 64 (by decide) (by decide) (by decide) (by decide) (by decide) x,
    List.forall_mem_cons.mpr ⟨fun x => piece_ok _ 87 0 (by decide) (by decide) (by decide) (by decide) (by decide) x,
    List.forall_mem_cons.mpr ⟨fun x => piece_ok _ 86 64 (by decide) (by decide) (by decide) (by decide) (by decide) x,
    List.forall_mem_cons.mpr ⟨fun x => piece_ok _ 86 0 (by decide) (by decide) (by decide) (by decide) (by decide) x,
    List.forall_mem_cons.mpr ⟨fun x => piece_ok _ 85 64 (by decide) (by decide) (by decide) (by decide) (by decide) x,
    pieces_171 c M0 f0⟩⟩⟩⟩⟩⟩⟩

theorem pieces_185 (c : Dev nD) (M0 : Memref sig .tc .vmem S64x32768 .f32) (f0 : Bf (F := F) c M0) :
    ∀ p ∈ packRun.sl.H1_185 c M0 f0, ∀ x : p.1.shape.Idx, p.2 x = outOf (packRun.sl.v9 c M0 f0) (p.1.emb x) :=
  List.forall_mem_cons.mpr ⟨fun x => piece_ok _ 92 0 (by decide) (by decide) (by decide) (by decide) (by decide) x,
    List.forall_mem_cons.mpr ⟨fun x => piece_ok _ 91 64 (by decide) (by decide) (by decide) (by decide) (by decide) x,
    List.forall_mem_cons.mpr ⟨fun x => piece_ok _ 91 0 (by decide) (by decide) (by decide) (by decide) (by decide) x,
    List.forall_mem_cons.mpr ⟨fun x => piece_ok _ 90 64 (by decide) (by decide) (by decide) (by decide) (by decide) x,
    List.forall_mem_cons.mpr ⟨fun x => piece_ok _ 90 0 (by decide) (by decide) (by decide) (by decide) (by decide) x,
    List.forall_mem_cons.mpr ⟨fun x => piece_ok _ 89 64 (by decide) (by decide) (by decide) (by decide) (by decide) x,
    List.forall_mem_cons.mpr ⟨fun x => piece_ok _ 89 0 (by decide) (by decide) (by decide) (by decide) (by decide) x,
    pieces_178 c M0 f0⟩⟩⟩⟩⟩⟩⟩

theorem pieces_191 (c : Dev nD) (M0 : Memref sig .tc .vmem S64x32768 .f32) (f0 : Bf (F := F) c M0) :
    ∀ p ∈ packRun.sl.H1_191 c M0 f0, ∀ x : p.1.shape.Idx, p.2 x = outOf (packRun.sl.v9 c M0 f0) (p.1.emb x) :=
  List.forall_mem_cons.mpr ⟨fun x => piece_ok _ 95 0 (by decide) (by decide) (by decide) (by decide) (by decide) x,
    List.forall_mem_cons.mpr ⟨fun x => piece_ok _ 94 64 (by decide) (by decide) (by decide) (by decide) (by decide) x,
    List.forall_mem_cons.mpr ⟨fun x => piece_ok _ 94 0 (by decide) (by decide) (by decide) (by decide) (by decide) x,
    List.forall_mem_cons.mpr ⟨fun x => piece_ok _ 93 64 (by decide) (by decide) (by decide) (by decide) (by decide) x,
    List.forall_mem_cons.mpr ⟨fun x => piece_ok _ 93 0 (by decide) (by decide) (by decide) (by decide) (by decide) x,
    List.forall_mem_cons.mpr ⟨fun x => piece_ok _ 92 64 (by decide) (by decide) (by decide) (by decide) (by decide) x,
    pieces_185 c M0 f0⟩⟩⟩⟩⟩⟩

theorem pieces_198 (c : Dev nD) (M0 : Memref sig .tc .vmem S64x32768 .f32) (f0 : Bf (F := F) c M0) :
    ∀ p ∈ packRun.sl.H1_198 c M0 f0, ∀ x : p.1.shape.Idx, p.2 x = outOf (packRun.sl.v9 c M0 f0) (p.1.emb x) :=
  List.forall_mem_cons.mpr ⟨fun x => piece_ok _ 98 64 (by decide) (by decide) (by decide) (by decide) (by decide) x,
    List.forall_mem_cons.mpr ⟨fun x => piece_ok _ 98 0 (by decide) (by decide) (by decide) (by decide) (by decide) x,
    List.forall_mem_cons.mpr ⟨fun x => piece_ok _ 97 64 (by decide) (by decide) (by decide) (by decide) (by decide) x,
    List.forall_mem_cons.mpr ⟨fun x => piece_ok _ 97 0 (by decide) (by decide) (by decide) (by decide) (by decide) x,
    List.forall_mem_cons.mpr ⟨fun x => piece_ok _ 96 64 (by decide) (by decide) (by decide) (by decide) (by decide) x,
    List.forall_mem_cons.mpr ⟨fun x => piece_ok _ 96 0 (by decide) (by decide) (by decide) (by decide) (by decide) x,
    List.forall_mem_cons.mpr ⟨fun x => piece_ok _ 95 64 (by decide) (by decide) (by decide) (by decide) (by decide) x,
    pieces_191 c M0 f0⟩⟩⟩⟩⟩⟩⟩

theorem pieces_205 (c : Dev nD) (M0 : Memref sig .tc .vmem S64x32768 .f32) (f0 : Bf (F := F) c M0) :
    ∀ p ∈ packRun.sl.H1_205 c M0 f0, ∀ x : p.1.shape.Idx, p.2 x = outOf (packRun.sl.v9 c M0 f0) (p.1.emb x) :=
  List.forall_mem_cons.mpr ⟨fun x => piece_ok _ 102 0 (by decide) (by decide) (by decide) (by decide) (by decide) x,
    List.forall_mem_cons.mpr ⟨fun x => piece_ok _ 101 64 (by decide) (by decide) (by decide) (by decide) (by decide) x,
    List.forall_mem_cons.mpr ⟨fun x => piece_ok _ 101 0 (by decide) (by decide) (by decide) (by decide) (by decide) x,
    List.forall_mem_cons.mpr ⟨fun x => piece_ok _ 100 64 (by decide) (by decide) (by decide) (by decide) (by decide) x,
    List.forall_mem_cons.mpr ⟨fun x => piece_ok _ 100 0 (by decide) (by decide) (by decide) (by decide) (by decide) x,
    List.forall_mem_cons.mpr ⟨fun x => piece_ok _ 99 64 (by decide) (by decide) (by decide) (by decide) (by decide) x,
    List.forall_mem_cons.mpr ⟨fun x => piece_ok _ 99 0 (by decide) (by decide) (by decide) (by decide) (by decide) x,
    pieces_198 c M0 f0⟩⟩⟩⟩⟩⟩⟩

theorem pieces_211 (c : Dev nD) (M0 : Memref sig .tc .vmem S64x32768 .f32) (f0 : Bf (F := F) c M0) :
    ∀ p ∈ packRun.sl.H1_211 c M0 f0, ∀ x : p.1.shape.Idx, p.2 x = outOf (packRun.sl.v9 c M0 f0) (p.1.emb x) :=
  List.forall_mem_cons.mpr ⟨fun x => piece_ok _ 105 0 (by decide) (by decide) (by decide) (by decide) (by decide) x,
    List.forall_mem_cons.mpr ⟨fun x => piece_ok _ 104 64 (by decide) (by decide) (by decide) (by decide) (by decide) x,
    List.forall_mem_cons.mpr ⟨fun x => piece_ok _ 104 0 (by decide) (by decide) (by decide) (by decide) (by decide) x,
    List.forall_mem_cons.mpr ⟨fun x => piece_ok _ 103 64 (by decide) (by decide) (by decide) (by decide) (by decide) x,
    List.forall_mem_cons.mpr ⟨fun x => piece_ok _ 103 0 (by decide) (by decide) (by decide) (by decide) (by decide) x,
    List.forall_mem_cons.mpr ⟨fun x => piece_ok _ 102 64 (by decide) (by decide) (by decide) (by decide) (by decide) x,
    pieces_205 c M0 f0⟩⟩⟩⟩⟩⟩

theorem pieces_218 (c : Dev nD) (M0 : Memref sig .tc .vmem S64x32768 .f32) (f0 : Bf (F := F) c M0) :
    ∀ p ∈ packRun.sl.H1_218 c M0 f0, ∀ x : p.1.shape.Idx, p.2 x = outOf (packRun.sl.v9 c M0 f0) (p.1.emb x) :=
  List.forall_mem_cons.mpr ⟨fun x => piece_ok _ 108 64 (by decide) (by decide) (by decide) (by decide) (by decide) x,
    List.forall_mem_cons.mpr ⟨fun x => piece_ok _ 108 0 (by decide) (by decide) (by decide) (by decide) (by decide) x,
    List.forall_mem_cons.mpr ⟨fun x => piece_ok _ 107 64 (by decide) (by decide) (by decide) (by decide) (by decide) x,
    List.forall_mem_cons.mpr ⟨fun x => piece_ok _ 107 0 (by decide) (by decide) (by decide) (by decide) (by decide) x,
    List.forall_mem_cons.mpr ⟨fun x => piece_ok _ 106 64 (by decide) (by decide) (by decide) (by decide) (by decide) x,
    List.forall_mem_cons.mpr ⟨fun x => piece_ok _ 106 0 (by decide) (by decide) (by decide) (by decide) (by decide) x,
    List.forall_mem_cons.mpr ⟨fun x => piece_ok _ 105 64 (by decide) (by decide) (by decide) (by decide) (by decide) x,
    pieces_211 c M0 f0⟩⟩⟩⟩⟩⟩⟩

theorem pieces_225 (c : Dev nD) (M0 : Memref sig .tc .vmem S64x32768 .f32) (f0 : Bf (F := F) c M0) :
    ∀ p ∈ packRun.sl.H1_225 c M0 f0, ∀ x : p.1.shape.Idx, p.2 x = outOf (packRun.sl.v9 c M0 f0) (p.1.emb x) :=
  List.forall_mem_cons.mpr ⟨fun x => piece_ok _ 112 0 (by decide) (by decide) (by decide) (by decide) (by decide) x,
    List.forall_mem_cons.mpr ⟨fun x => piece_ok _ 111 64 (by decide) (by decide) (by decide) (by decide) (by decide) x,
    List.forall_mem_cons.mpr ⟨fun x => piece_ok _ 111 0 (by decide) (by decide) (by decide) (by decide) (by decide) x,
    List.forall_mem_cons.mpr ⟨fun x => piece_ok _ 110 64 (by decide) (by decide) (by decide) (by decide) (by decide) x,
    List.forall_mem_cons.mpr ⟨fun x => piece_ok _ 110 0 (by decide) (by decide) (by decide) (by decide) (by decide) x,
    List.forall_mem_cons.mpr ⟨fun x => piece_ok _ 109 64 (by decide) (by decide) (by decide) (by decide) (by decide) x,
    List.forall_mem_cons.mpr ⟨fun x => piece_ok _ 109 0 (by decide) (by decide) (by decide) (by decide) (by decide) x,
    pieces_218 c M0 f0⟩⟩⟩⟩⟩⟩⟩

theorem pieces_231 (c : Dev nD) (M0 : Memref sig .tc .vmem S64x32768 .f32) (f0 : Bf (F := F) c M0) :
    ∀ p ∈ packRun.sl.H1_231 c M0 f0, ∀ x : p.1.shape.Idx, p.2 x = outOf (packRun.sl.v9 c M0 f0) (p.1.emb x) :=
  List.forall_mem_cons.mpr ⟨fun x => piece_ok _ 115 0 (by decide) (by decide) (by decide) (by decide) (by decide) x,
    List.forall_mem_cons.mpr ⟨fun x => piece_ok _ 114 64 (by decide) (by decide) (by decide) (by decide) (by decide) x,
    List.forall_mem_cons.mpr ⟨fun x => piece_ok _ 114 0 (by decide) (by decide) (by decide) (by decide) (by decide) x,
    List.forall_mem_cons.mpr ⟨fun x => piece_ok _ 113 64 (by decide) (by decide) (by decide) (by decide) (by decide) x,
    List.forall_mem_cons.mpr ⟨fun x => piece_ok _ 113 0 (by decide) (by decide) (by decide) (by decide) (by decide) x,
    List.forall_mem_cons.mpr ⟨fun x => piece_ok _ 112 64 (by decide) (by decide) (by decide) (by decide) (by decide) x,
    pieces_225 c M0 f0⟩⟩⟩⟩⟩⟩

theorem pieces_238 (c : Dev nD) (M0 : Memref sig .tc .vmem S64x32768 .f32) (f0 : Bf (F := F) c M0) :
    ∀ p ∈ packRun.sl.H1_238 c M0 f0, ∀ x : p.1.shape.Idx, p.2 x = outOf (packRun.sl.v9 c M0 f0) (p.1.emb x) :=
  List.forall_mem_cons.mpr ⟨fun x => piece_ok _ 118 64 (by decide) (by decide) (by decide) (by decide) (by decide) x,
    List.forall_mem_cons.mpr ⟨fun x => piece_ok _ 118 0 (by decide) (by decide) (by decide) (by decide) (by decide) x,
    List.forall_mem_cons.mpr ⟨fun x => piece_ok _ 117 64 (by decide) (by decide) (by decide) (by decide) (by decide) x,
    List.forall_mem_cons.mpr ⟨fun x => piece_ok _ 117 0 (by decide) (by decide) (by decide) (by decide) (by decide) x,
    List.forall_mem_cons.mpr ⟨fun x => piece_ok _ 116 64 (by decide) (by decide) (by decide) (by decide) (by decide) x,
    List.forall_mem_cons.mpr ⟨fun x => piece_ok _ 116 0 (by decide) (by decide) (by decide) (by decide) (by decide) x,
    List.forall_mem_cons.mpr ⟨fun x => piece_ok _ 115 64 (by decide) (by decide) (by decide) (by decide) (by decide) x,
    pieces_231 c M0 f0⟩⟩⟩⟩⟩⟩⟩

theorem pieces_245 (c : Dev nD) (M0 : Memref sig .tc .vmem S64x32768 .f32) (f0 : Bf (F := F) c M0) :
    ∀ p ∈ packRun.sl.H1_245 c M0 f0, ∀ x : p.1.shape.Idx, p.2 x = outOf (packRun.sl.v9 c M0 f0) (p.1.emb x) :=
  List.forall_mem_cons.mpr ⟨fun x => piece_ok _ 122 0 (by decide) (by decide) (by decide) (by decide) (by decide) x,
    List.forall_mem_cons.mpr ⟨fun x => piece_ok _ 121 64 (by decide) (by decide) (by decide) (by decide) (by decide) x,
    List.forall_mem_cons.mpr ⟨fun x => piece_ok _ 121 0 (by decide) (by decide) (by decide) (by decide) (by decide) x,
    List.forall_mem_cons.mpr ⟨fun x => piece_ok _ 120 64 (by decide) (by decide) (by decide) (by decide) (by decide) x,
    List.forall_mem_cons.mpr ⟨fun x => piece_ok _ 120 0 (by decide) (by decide) (by decide) (by decide) (by decide) x,
    List.forall_mem_cons.mpr ⟨fun x => piece_ok _ 119 64 (by decide) (by decide) (by decide) (by decide) (by decide) x,
    List.forall_mem_cons.mpr ⟨fun x => piece_ok _ 119 0 (by decide) (by decide) (by decide) (by decide) (by decide) x,
    pieces_238 c M0 f0⟩⟩⟩⟩⟩⟩⟩

theorem pieces_251 (c : Dev nD) (M0 : Memref sig .tc .vmem S64x32768 .f32) (f0 : Bf (F := F) c M0) :
    ∀ p ∈ packRun.sl.H1_251 c M0 f0, ∀ x : p.1.shape.Idx, p.2 x = outOf (packRun.sl.v9 c M0 f0) (p.1.emb x) :=
  List.forall_mem_cons.mpr ⟨fun x => piece_ok _ 125 0 (by decide) (by decide) (by decide) (by decide) (by decide) x,
    List.forall_mem_cons.mpr ⟨fun x => piece_ok _ 124 64 (by decide) (by decide) (by decide) (by decide) (by decide) x,
    List.forall_mem_cons.mpr ⟨fun x => piece_ok _ 124 0 (by decide) (by decide) (by decide) (by decide) (by decide) x,
    List.forall_mem_cons.mpr ⟨fun x => piece_ok _ 123 64 (by decide) (by decide) (by decide) (by decide) (by decide) x,
    List.forall_mem_cons.mpr ⟨fun x => piece_ok _ 123 0 (by decide) (by decide) (by decide) (by decide) (by decide) x,
    List.forall_mem_cons.mpr ⟨fun x => piece_ok _ 122 64 (by decide) (by decide) (by decide) (by decide) (by decide) x,
    pieces_245 c M0 f0⟩⟩⟩⟩⟩⟩

theorem pieces_258 (c : Dev nD) (M0 : Memref sig .tc .vmem S64x32768 .f32) (f0 : Bf (F := F) c M0) :
    ∀ p ∈ packRun.sl.H1_258 c M0 f0, ∀ x : p.1.shape.Idx, p.2 x = outOf (packRun.sl.v9 c M0 f0) (p.1.emb x) :=
  List.forall_mem_cons.mpr ⟨fun x => piece_ok _ 128 64 (by decide) (by decide) (by decide) (by decide) (by decide) x,
    List.forall_mem_cons.mpr ⟨fun x => piece_ok _ 128 0 (by decide) (by decide) (by decide) (by decide) (by decide) x,
    List.forall_mem_cons.mpr ⟨fun x => piece_ok _ 127 64 (by decide) (by decide) (by decide) (by decide) (by decide) x,
    List.forall_mem_cons.mpr ⟨fun x => piece_ok _ 127 0 (by decide) (by decide) (by decide) (by decide) (by decide) x,
    List.forall_mem_cons.mpr ⟨fun x => piece_ok _ 126 64 (by decide) (by decide) (by decide) (by decide) (by decide) x,
    List.forall_mem_cons.mpr ⟨fun x => piece_ok _ 126 0 (by decide) (by decide) (by decide) (by decide) (by decide) x,
    List.forall_mem_cons.mpr ⟨fun x => piece_ok _ 125 64 (by decide) (by decide) (by decide) (by decide) (by decide) x,
    pieces_251 c M0 f0⟩⟩⟩⟩⟩⟩⟩

theorem pieces_265 (c : Dev nD) (M0 : Memref sig .tc .vmem S64x32768 .f32) (f0 : Bf (F := F) c M0) :
    ∀ p ∈ packRun.sl.H1_265 c M0 f0, ∀ x : p.1.shape.Idx, p.2 x = outOf (packRun.sl.v9 c M0 f0) (p.1.emb x) :=
  List.forall_mem_cons.mpr ⟨fun x => piece_ok _ 132 0 (by decide) (by decide) (by decide) (by decide) (by decide) x,
    List.forall_mem_cons.mpr ⟨fun x => piece_ok _ 131 64 (by decide) (by decide) (by decide) (by decide) (by decide) x,
    List.forall_mem_cons.mpr ⟨fun x => piece_ok _ 131 0 (by decide) (by decide) (by decide) (by decide) (by decide) x,
    List.forall_mem_cons.mpr ⟨fun x => piece_ok _ 130 64 (by decide) (by decide) (by decide) (by decide) (by decide) x,
    List.forall_mem_cons.mpr ⟨fun x => piece_ok _ 130 0 (by decide) (by decide) (by decide) (by decide) (by decide) x,
    List.forall_mem_cons.mpr ⟨fun x => piece_ok _ 129 64 (by decide) (by decide) (by decide) (by decide) (by decide) x,
    List.forall_mem_cons.mpr ⟨fun x => piece_ok _ 129 0 (by decide) (by decide) (by decide) (by decide) (by decide) x,
    pieces_258 c M0 f0⟩⟩⟩⟩⟩⟩⟩

theorem pieces_271 (c : Dev nD) (M0 : Memref sig .tc .vmem S64x32768 .f32) (f0 : Bf (F := F) c M0) :
    ∀ p ∈ packRun.sl.H1_271 c M0 f0, ∀ x : p.1.shape.Idx, p.2 x = outOf (packRun.sl.v9 c M0 f0) (p.1.emb x) :=
  List.forall_mem_cons.mpr ⟨fun x => piece_ok _ 135 0 (by decide) (by decide) (by decide) (by decide) (by decide) x,
    List.forall_mem_cons.mpr ⟨fun x => piece_ok _ 134 64 (by decide) (by decide) (by decide) (by decide) (by decide) x,
    List.forall_mem_cons.mpr ⟨fun x => piece_ok _ 134 0 (by decide) (by decide) (by decide) (by decide) (by decide) x,
    List.forall_mem_cons.mpr ⟨fun x => piece_ok _ 133 64 (by decide) (by decide) (by decide) (by decide) (by decide) x,
    List.forall_mem_cons.mpr ⟨fun x => piece_ok _ 133 0 (by decide) (by decide) (by decide) (by decide) (by decide) x,
    List.forall_mem_cons.mpr ⟨fun x => piece_ok _ 132 64 (by decide) (by decide) (by decide) (by decide) (by decide) x,
    pieces_265 c M0 f0⟩⟩⟩⟩⟩⟩

theorem pieces_278 (c : Dev nD) (M0 : Memref sig .tc .vmem S64x32768 .f32) (f0 : Bf (F := F) c M0) :
    ∀ p ∈ packRun.sl.H1_278 c M0 f0, ∀ x : p.1.shape.Idx, p.2 x = outOf (packRun.sl.v9 c M0 f0) (p.1.emb x) :=
  List.forall_mem_cons.mpr ⟨fun x => piece_ok _ 138 64 (by decide) (by decide) (by decide) (by decide) (by decide) x,
    List.forall_mem_cons.mpr ⟨fun x => piece_ok _ 138 0 (by decide) (by decide) (by decide) (by decide) (by decide) x,
    List.forall_mem_cons.mpr ⟨fun x => piece_ok _ 137 64 (by decide) (by decide) (by decide) (by decide) (by decide) x,
    List.forall_mem_cons.mpr ⟨fun x => piece_ok _ 137 0 (by decide) (by decide) (by decide) (by decide) (by decide) x,
    List.forall_mem_cons.mpr ⟨fun x => piece_ok _ 136 64 (by decide) (by decide) (by decide) (by decide) (by decide) x,
    List.forall_mem_cons.mpr ⟨fun x => piece_ok _ 136 0 (by decide) (by decide) (by decide) (by decide) (by decide) x,
    List.forall_mem_cons.mpr ⟨fun x => piece_ok _ 135 64 (by decide) (by decide) (by decide) (by decide) (by decide) x,
    pieces_271 c M0 f0⟩⟩⟩⟩⟩⟩⟩

theorem pieces_285 (c : Dev nD) (M0 : Memref sig .tc .vmem S64x32768 .f32) (f0 : Bf (F := F) c M0) :
    ∀ p ∈ packRun.sl.H1_285 c M0 f0, ∀ x : p.1.shape.Idx, p.2 x = outOf (packRun.sl.v9 c M0 f0) (p.1.emb x) :=
  List.forall_mem_cons.mpr ⟨fun x => piece_ok _ 142 0 (by decide) (by decide) (by decide) (by decide) (by decide) x,
    List.forall_mem_cons.mpr ⟨fun x => piece_ok _ 141 64 (by decide) (by decide) (by decide) (by decide) (by decide) x,
    List.forall_mem_cons.mpr ⟨fun x => piece_ok _ 141 0 (by decide) (by decide) (by decide) (by decide) (by decide) x,
    List.forall_mem_cons.mpr ⟨fun x => piece_ok _ 140 64 (by decide) (by decide) (by decide) (by decide) (by decide) x,
    List.forall_mem_cons.mpr ⟨fun x => piece_ok _ 140 0 (by decide) (by decide) (by decide) (by decide) (by decide) x,
    List.forall_mem_cons.mpr ⟨fun x => piece_ok _ 139 64 (by decide) (by decide) (by decide) (by decide) (by decide) x,
    List.forall_mem_cons.mpr ⟨fun x => piece_ok _ 139 0 (by decide) (by decide) (by decide) (by decide) (by decide) x,
    pieces_278 c M0 f0⟩⟩⟩⟩⟩⟩⟩

theorem pieces_291 (c : Dev nD) (M0 : Memref sig .tc .vmem S64x32768 .f32) (f0 : Bf (F := F) c M0) :
    ∀ p ∈ packRun.sl.H1_291 c M0 f0, ∀ x : p.1.shape.Idx, p.2 x = outOf (packRun.sl.v9 c M0 f0) (p.1.emb x) :=
  List.forall_mem_cons.mpr ⟨fun x => piece_ok _ 145 0 (by decide) (by decide) (by decide) (by decide) (by decide) x,
    List.forall_mem_cons.mpr ⟨fun x => piece_ok _ 144 64 (by decide) (by decide) (by decide) (by decide) (by decide) x,
    List.forall_mem_cons.mpr ⟨fun x => piece_ok _ 144 0 (by decide) (by decide) (by decide) (by decide) (by decide) x,
    List.forall_mem_cons.mpr ⟨fun x => piece_ok _ 143 64 (by decide) (by decide) (by decide) (by decide) (by decide) x,
    List.forall_mem_cons.mpr ⟨fun x => piece_ok _ 143 0 (by decide) (by decide) (by decide) (by decide) (by decide) x,
    List.forall_mem_cons.mpr ⟨fun x => piece_ok _ 142 64 (by decide) (by decide) (by decide) (by decide) (by decide) x,
    pieces_285 c M0 f0⟩⟩⟩⟩⟩⟩

theorem pieces_298 (c : Dev nD) (M0 : Memref sig .tc .vmem S64x32768 .f32) (f0 : Bf (F := F) c M0) :
    ∀ p ∈ packRun.sl.H1_298 c M0 f0, ∀ x : p.1.shape.Idx, p.2 x = outOf (packRun.sl.v9 c M0 f0) (p.1.emb x) :=
  List.forall_mem_cons.mpr ⟨fun x => piece_ok _ 148 64 (by decide) (by decide) (by decide) (by decide) (by decide) x,
    List.forall_mem_cons.mpr ⟨fun x => piece_ok _ 148 0 (by decide) (by decide) (by decide) (by decide) (by decide) x,
    List.forall_mem_cons.mpr ⟨fun x => piece_ok _ 147 64 (by decide) (by decide) (by decide) (by decide) (by decide) x,
    List.forall_mem_cons.mpr ⟨fun x => piece_ok _ 147 0 (by decide) (by decide) (by decide) (by decide) (by decide) x,
    List.forall_mem_cons.mpr ⟨fun x => piece_ok _ 146 64 (by decide) (by decide) (by decide) (by decide) (by decide) x,
    List.forall_mem_cons.mpr ⟨fun x => piece_ok _ 146 0 (by decide) (by decide) (by decide) (by decide) (by decide) x,
    List.forall_mem_cons.mpr ⟨fun x => piece_ok _ 145 64 (by decide) (by decide) (by decide) (by decide) (by decide) x,
    pieces_291 c M0 f0⟩⟩⟩⟩⟩⟩⟩

theorem pieces_305 (c : Dev nD) (M0 : Memref sig .tc .vmem S64x32768 .f32) (f0 : Bf (F := F) c M0) :
    ∀ p ∈ packRun.sl.H1_305 c M0 f0, ∀ x : p.1.shape.Idx, p.2 x = outOf (packRun.sl.v9 c M0 f0) (p.1.emb x) :=
  List.forall_mem_cons.mpr ⟨fun x => piece_ok _ 152 0 (by decide) (by decide) (by decide) (by decide) (by decide) x,
    List.forall_mem_cons.mpr ⟨fun x => piece_ok _ 151 64 (by decide) (by decide) (by decide) (by decide) (by decide) x,
    List.forall_mem_cons.mpr ⟨fun x => piece_ok _ 151 0 (by decide) (by decide) (by decide) (by decide) (by decide) x,
    List.forall_mem_cons.mpr ⟨fun x => piece_ok _ 150 64 (by decide) (by decide) (by decide) (by decide) (by decide) x,
    List.forall_mem_cons.mpr ⟨fun x => piece_ok _ 150 0 (by decide) (by decide) (by decide) (by decide) (by decide) x,
    List.forall_mem_cons.mpr ⟨fun x => piece_ok _ 149 64 (by decide) (by decide) (by decide) (by decide) (by decide) x,
    List.forall_mem_cons.mpr ⟨fun x => piece_ok _ 149 0 (by decide) (by decide) (by decide) (by decide) (by decide) x,
    pieces_298 c M0 f0⟩⟩⟩⟩⟩⟩⟩

theorem pieces_311 (c : Dev nD) (M0 : Memref sig .tc .vmem S64x32768 .f32) (f0 : Bf (F := F) c M0) :
    ∀ p ∈ packRun.sl.H1_311 c M0 f0, ∀ x : p.1.shape.Idx, p.2 x = outOf (packRun.sl.v9 c M0 f0) (p.1.emb x) :=
  List.forall_mem_cons.mpr ⟨fun x => piece_ok _ 155 0 (by decide) (by decide) (by decide) (by decide) (by decide) x,
    List.forall_mem_cons.mpr ⟨fun x => piece_ok _ 154 64 (by decide) (by decide) (by decide) (by decide) (by decide) x,
    List.forall_mem_cons.mpr ⟨fun x => piece_ok _ 154 0 (by decide) (by decide) (by decide) (by decide) (by decide) x,
    List.forall_mem_cons.mpr ⟨fun x => piece_ok _ 153 64 (by decide) (by decide) (by decide) (by decide) (by decide) x,
    List.forall_mem_cons.mpr ⟨fun x => piece_ok _ 153 0 (by decide) (by decide) (by decide) (by decide) (by decide) x,
    List.forall_mem_cons.mpr ⟨fun x => piece_ok _ 152 64 (by decide) (by decide) (by decide) (by decide) (by decide) x,
    pieces_305 c M0 f0⟩⟩⟩⟩⟩⟩

theorem pieces_318 (c : Dev nD) (M0 : Memref sig .tc .vmem S64x32768 .f32) (f0 : Bf (F := F) c M0) :
    ∀ p ∈ packRun.sl.H1_318 c M0 f0, ∀ x : p.1.shape.Idx, p.2 x = outOf (packRun.sl.v9 c M0 f0) (p.1.emb x) :=
  List.forall_mem_cons.mpr ⟨fun x => piece_ok _ 158 64 (by decide) (by decide) (by decide) (by decide) (by decide) x,
    List.forall_mem_cons.mpr ⟨fun x => piece_ok _ 158 0 (by decide) (by decide) (by decide) (by decide) (by decide) x,
    List.forall_mem_cons.mpr ⟨fun x => piece_ok _ 157 64 (by decide) (by decide) (by decide) (by decide) (by decide) x,
    List.forall_mem_cons.mpr ⟨fun x => piece_ok _ 157 0 (by decide) (by decide) (by decide) (by decide) (by decide) x,
    List.forall_mem_cons.mpr ⟨fun x => piece_ok _ 156 64 (by decide) (by decide) (by decide) (by decide) (by decide) x,
    List.forall_mem_cons.mpr ⟨fun x => piece_ok _ 156 0 (by decide) (by decide) (by decide) (by decide) (by decide) x,
    List.forall_mem_cons.mpr ⟨fun x => piece_ok _ 155 64 (by decide) (by decide) (by decide) (by decide) (by decide) x,
    pieces_311 c M0 f0⟩⟩⟩⟩⟩⟩⟩

theorem pieces_325 (c : Dev nD) (M0 : Memref sig .tc .vmem S64x32768 .f32) (f0 : Bf (F := F) c M0) :
    ∀ p ∈ packRun.sl.H1_325 c M0 f0, ∀ x : p.1.shape.Idx, p.2 x = outOf (packRun.sl.v9 c M0 f0) (p.1.emb x) :=
  List.forall_mem_cons.mpr ⟨fun x => piece_ok _ 162 0 (by decide) (by decide) (by decide) (by decide) (by decide) x,
    List.forall_mem_cons.mpr ⟨fun x => piece_ok _ 161 64 (by decide) (by decide) (by decide) (by decide) (by decide) x,
    List.forall_mem_cons.mpr ⟨fun x => piece_ok _ 161 0 (by decide) (by decide) (by decide) (by decide) (by decide) x,
    List.forall_mem_cons.mpr ⟨fun x => piece_ok _ 160 64 (by decide) (by decide) (by decide) (by decide) (by decide) x,
    List.forall_mem_cons.mpr ⟨fun x => piece_ok _ 160 0 (by decide) (by decide) (by decide) (by decide) (by decide) x,
    List.forall_mem_cons.mpr ⟨fun x => piece_ok _ 159 64 (by decide) (by decide) (by decide) (by decide) (by decide) x,
    List.forall_mem_cons.mpr ⟨fun x => piece_ok _ 159 0 (by decide) (by decide) (by decide) (by decide) (by decide) x,
    pieces_318 c M0 f0⟩⟩⟩⟩⟩⟩⟩

theorem pieces_331 (c : Dev nD) (M0 : Memref sig .tc .vmem S64x32768 .f32) (f0 : Bf (F := F) c M0) :
    ∀ p ∈ packRun.sl.H1_331 c M0 f0, ∀ x : p.1.shape.Idx, p.2 x = outOf (packRun.sl.v9 c M0 f0) (p.1.emb x) :=
  List.forall_mem_cons.mpr ⟨fun x => piece_ok _ 165 0 (by decide) (by decide) (by decide) (by decide) (by decide) x,
    List.forall_mem_cons.mpr ⟨fun x => piece_ok _ 164 64 (by decide) (by decide) (by decide) (by decide) (by decide) x,
    List.forall_mem_cons.mpr ⟨fun x => piece_ok _ 164 0 (by decide) (by decide) (by decide) (by decide) (by decide) x,
    List.forall_mem_cons.mpr ⟨fun x => piece_ok _ 163 64 (by decide) (by decide) (by decide) (by decide) (by decide) x,
    List.forall_mem_cons.mpr ⟨fun x => piece_ok _ 163 0 (by decide) (by decide) (by decide) (by decide) (by decide) x,
    List.forall_mem_cons.mpr ⟨fun x => piece_ok _ 162 64 (by decide) (by decide) (by decide) (by decide) (by decide) x,
    pieces_325 c M0 f0⟩⟩⟩⟩⟩⟩

theorem pieces_338 (c : Dev nD) (M0 : Memref sig .tc .vmem S64x32768 .f32) (f0 : Bf (F := F) c M0) :
    ∀ p ∈ packRun.sl.H1_338 c M0 f0, ∀ x : p.1.shape.Idx, p.2 x = outOf (packRun.sl.v9 c M0 f0) (p.1.emb x) :=
  List.forall_mem_cons.mpr ⟨fun x => piece_ok _ 168 64 (by decide) (by decide) (by decide) (by decide) (by decide) x,
    List.forall_mem_cons.mpr ⟨fun x => piece_ok _ 168 0 (by decide) (by decide) (by decide) (by decide) (by decide) x,
    List.forall_mem_cons.mpr ⟨fun x => piece_ok _ 167 64 (by decide) (by decide) (by decide) (by decide) (by decide) x,
    List.forall_mem_cons.mpr ⟨fun x => piece_ok _ 167 0 (by decide) (by decide) (by decide) (by decide) (by decide) x,
    List.forall_mem_cons.mpr ⟨fun x => piece_ok _ 166 64 (by decide) (by decide) (by decide) (by decide) (by decide) x,
    List.forall_mem_cons.mpr ⟨fun x => piece_ok _ 166 0 (by decide) (by decide) (by decide) (by decide) (by decide) x,
    List.forall_mem_cons.mpr ⟨fun x => piece_ok _ 165 64 (by decide) (by decide) (by decide) (by decide) (by decide) x,
    pieces_331 c M0 f0⟩⟩⟩⟩⟩⟩⟩

theorem pieces_345 (c : Dev nD) (M0 : Memref sig .tc .vmem S64x32768 .f32) (f0 : Bf (F := F) c M0) :
    ∀ p ∈ packRun.sl.H1_345 c M0 f0, ∀ x : p.1.shape.Idx, p.2 x = outOf (packRun.sl.v9 c M0 f0) (p.1.emb x) :=
  List.forall_mem_cons.mpr ⟨fun x => piece_ok _ 172 0 (by decide) (by decide) (by decide) (by decide) (by decide) x,
    List.forall_mem_cons.mpr ⟨fun x => piece_ok _ 171 64 (by decide) (by decide) (by decide) (by decide) (by decide) x,
    List.forall_mem_cons.mpr ⟨fun x => piece_ok _ 171 0 (by decide) (by decide) (by decide) (by decide) (by decide) x,
    List.forall_mem_cons.mpr ⟨fun x => piece_ok _ 170 64 (by decide) (by decide) (by decide) (by decide) (by decide) x,
    List.forall_mem_cons.mpr ⟨fun x => piece_ok _ 170 0 (by decide) (by decide) (by decide) (by decide) (by decide) x,
    List.forall_mem_cons.mpr ⟨fun x => piece_ok _ 169 64 (by decide) (by decide) (by decide) (by decide) (by decide) x,
    List.forall_mem_cons.mpr ⟨fun x => piece_ok _ 169 0 (by decide) (by decide) (by decide) (by decide) (by decide) x,
    pieces_338 c M0 f0⟩⟩⟩⟩⟩⟩⟩

theorem pieces_351 (c : Dev nD) (M0 : Memref sig .tc .vmem S64x32768 .f32) (f0 : Bf (F := F) c M0) :
    ∀ p ∈ packRun.sl.H1_351 c M0 f0, ∀ x : p.1.shape.Idx, p.2 x = outOf (packRun.sl.v9 c M0 f0) (p.1.emb x) :=
  List.forall_mem_cons.mpr ⟨fun x => piece_ok _ 175 0 (by decide) (by decide) (by decide) (by decide) (by decide) x,
    List.forall_mem_cons.mpr ⟨fun x => piece_ok _ 174 64 (by decide) (by decide) (by decide) (by decide) (by decide) x,
    List.forall_mem_cons.mpr ⟨fun x => piece_ok _ 174 0 (by decide) (by decide) (by decide) (by decide) (by decide) x,
    List.forall_mem_cons.mpr ⟨fun x => piece_ok _ 173 64 (by decide) (by decide) (by decide) (by decide) (by decide) x,
    List.forall_mem_cons.mpr ⟨fun x => piece_ok _ 173 0 (by decide) (by decide) (by decide) (by decide) (by decide) x,
    List.forall_mem_cons.mpr ⟨fun x => piece_ok _ 172 64 (by decide) (by decide) (by decide) (by decide) (by decide) x,
    pieces_345 c M0 f0⟩⟩⟩⟩⟩⟩

theorem pieces_358 (c : Dev nD) (M0 : Memref sig .tc .vmem S64x32768 .f32) (f0 : Bf (F := F) c M0) :
    ∀ p ∈ packRun.sl.H1_358 c M0 f0, ∀ x : p.1.shape.Idx, p.2 x = outOf (packRun.sl.v9 c M0 f0) (p.1.emb x) :=
  List.forall_mem_cons.mpr ⟨fun x => piece_ok _ 178 64 (by decide) (by decide) (by decide) (by decide) (by decide) x,
    List.forall_mem_cons.mpr ⟨fun x => piece_ok _ 178 0 (by decide) (by decide) (by decide) (by decide) (by decide) x,
    List.forall_mem_cons.mpr ⟨fun x => piece_ok _ 177 64 (by decide) (by decide) (by decide) (by decide) (by decide) x,
    List.forall_mem_cons.mpr ⟨fun x => piece_ok _ 177 0 (by decide) (by decide) (by decide) (by decide) (by decide) x,
    List.forall_mem_cons.mpr ⟨fun x => piece_ok _ 176 64 (by decide) (by decide) (by decide) (by decide) (by decide) x,
    List.forall_mem_cons.mpr ⟨fun x => piece_ok _ 176 0 (by decide) (by decide) (by decide) (by decide) (by decide) x,
    List.forall_mem_cons.mpr ⟨fun x => piece_ok _ 175 64 (by decide) (by decide) (by decide) (by decide) (by decide) x,
    pieces_351 c M0 f0⟩⟩⟩⟩⟩⟩⟩

theorem pieces_365 (c : Dev nD) (M0 : Memref sig .tc .vmem S64x32768 .f32) (f0 : Bf (F := F) c M0) :
    ∀ p ∈ packRun.sl.H1_365 c M0 f0, ∀ x : p.1.shape.Idx, p.2 x = outOf (packRun.sl.v9 c M0 f0) (p.1.emb x) :=
  List.forall_mem_cons.mpr ⟨fun x => piece_ok _ 182 0 (by decide) (by decide) (by decide) (by decide) (by decide) x,
    List.forall_mem_cons.mpr ⟨fun x => piece_ok _ 181 64 (by decide) (by decide) (by decide) (by decide) (by decide) x,
    List.forall_mem_cons.mpr ⟨fun x => piece_ok _ 181 0 (by decide) (by decide) (by decide) (by decide) (by decide) x,
    List.forall_mem_cons.mpr ⟨fun x => piece_ok _ 180 64 (by decide) (by decide) (by decide) (by decide) (by decide) x,
    List.forall_mem_cons.mpr ⟨fun x => piece_ok _ 180 0 (by decide) (by decide) (by decide) (by decide) (by decide) x,
    List.forall_mem_cons.mpr ⟨fun x => piece_ok _ 179 64 (by decide) (by decide) (by decide) (by decide) (by decide) x,
    List.forall_mem_cons.mpr ⟨fun x => piece_ok _ 179 0 (by decide) (by decide) (by decide) (by decide) (by decide) x,
    pieces_358 c M0 f0⟩⟩⟩⟩⟩⟩⟩

theorem pieces_371 (c : Dev nD) (M0 : Memref sig .tc .vmem S64x32768 .f32) (f0 : Bf (F := F) c M0) :
    ∀ p ∈ packRun.sl.H1_371 c M0 f0, ∀ x : p.1.shape.Idx, p.2 x = outOf (packRun.sl.v9 c M0 f0) (p.1.emb x) :=
  List.forall_mem_cons.mpr ⟨fun x => piece_ok _ 185 0 (by decide) (by decide) (by decide) (by decide) (by decide) x,
    List.forall_mem_cons.mpr ⟨fun x => piece_ok _ 184 64 (by decide) (by decide) (by decide) (by decide) (by decide) x,
    List.forall_mem_cons.mpr ⟨fun x => piece_ok _ 184 0 (by decide) (by decide) (by decide) (by decide) (by decide) x,
    List.forall_mem_cons.mpr ⟨fun x => piece_ok _ 183 64 (by decide) (by decide) (by decide) (by decide) (by decide) x,
    List.forall_mem_cons.mpr ⟨fun x => piece_ok _ 183 0 (by decide) (by decide) (by decide) (by decide) (by decide) x,
    List.forall_mem_cons.mpr ⟨fun x => piece_ok _ 182 64 (by decide) (by decide) (by decide) (by decide) (by decide) x,
    pieces_365 c M0 f0⟩⟩⟩⟩⟩⟩

theorem pieces_378 (c : Dev nD) (M0 : Memref sig .tc .vmem S64x32768 .f32) (f0 : Bf (F := F) c M0) :
    ∀ p ∈ packRun.sl.H1_378 c M0 f0, ∀ x : p.1.shape.Idx, p.2 x = outOf (packRun.sl.v9 c M0 f0) (p.1.emb x) :=
  List.forall_mem_cons.mpr ⟨fun x => piece_ok _ 188 64 (by decide) (by decide) (by decide) (by decide) (by decide) x,
    List.forall_mem_cons.mpr ⟨fun x => piece_ok _ 188 0 (by decide) (by decide) (by decide) (by decide) (by decide) x,
    List.forall_mem_cons.mpr ⟨fun x => piece_ok _ 187 64 (by decide) (by decide) (by decide) (by decide) (by decide) x,
    List.forall_mem_cons.mpr ⟨fun x => piece_ok _ 187 0 (by decide) (by decide) (by decide) (by decide) (by decide) x,
    List.forall_mem_cons.mpr ⟨fun x => piece_ok _ 186 64 (by decide) (by decide) (by decide) (by decide) (by decide) x,
    List.forall_mem_cons.mpr ⟨fun x => piece_ok _ 186 0 (by decide) (by decide) (by decide) (by decide) (by decide) x,
    List.forall_mem_cons.mpr ⟨fun x => piece_ok _ 185 64 (by decide) (by decide) (by decide) (by decide) (by decide) x,
    pieces_371 c M0 f0⟩⟩⟩⟩⟩⟩⟩

theorem pieces_385 (c : Dev nD) (M0 : Memref sig .tc .vmem S64x32768 .f32) (f0 : Bf (F := F) c M0) :
    ∀ p ∈ packRun.sl.H1_385 c M0 f0, ∀ x : p.1.shape.Idx, p.2 x = outOf (packRun.sl.v9 c M0 f0) (p.1.emb x) :=
  List.forall_mem_cons.mpr ⟨fun x => piece_ok _ 192 0 (by decide) (by decide) (by decide) (by decide) (by decide) x,
    List.forall_mem_cons.mpr ⟨fun x => piece_ok _ 191 64 (by decide) (by decide) (by decide) (by decide) (by decide) x,
    List.forall_mem_cons.mpr ⟨fun x => piece_ok _ 191 0 (by decide) (by decide) (by decide) (by decide) (by decide) x,
    List.forall_mem_cons.mpr ⟨fun x => piece_ok _ 190 64 (by decide) (by decide) (by decide) (by decide) (by decide) x,
    List.forall_mem_cons.mpr ⟨fun x => piece_ok _ 190 0 (by decide) (by decide) (by decide) (by decide) (by decide) x,
    List.forall_mem_cons.mpr ⟨fun x => piece_ok _ 189 64 (by decide) (by decide) (by decide) (by decide) (by decide) x,
    List.forall_mem_cons.mpr ⟨fun x => piece_ok _ 189 0 (by decide) (by decide) (by decide) (by decide) (by decide) x,
    pieces_378 c M0 f0⟩⟩⟩⟩⟩⟩⟩

theorem pieces_391 (c : Dev nD) (M0 : Memref sig .tc .vmem S64x32768 .f32) (f0 : Bf (F := F) c M0) :
    ∀ p ∈ packRun.sl.H1_391 c M0 f0, ∀ x : p.1.shape.Idx, p.2 x = outOf (packRun.sl.v9 c M0 f0) (p.1.emb x) :=
  List.forall_mem_cons.mpr ⟨fun x => piece_ok _ 195 0 (by decide) (by decide) (by decide) (by decide) (by decide) x,
    List.forall_mem_cons.mpr ⟨fun x => piece_ok _ 194 64 (by decide) (by decide) (by decide) (by decide) (by decide) x,
    List.forall_mem_cons.mpr ⟨fun x => piece_ok _ 194 0 (by decide) (by decide) (by decide) (by decide) (by decide) x,
    List.forall_mem_cons.mpr ⟨fun x => piece_ok _ 193 64 (by decide) (by decide) (by decide) (by decide) (by decide) x,
    List.forall_mem_cons.mpr ⟨fun x => piece_ok _ 193 0 (by decide) (by decide) (by decide) (by decide) (by decide) x,
    List.forall_mem_cons.mpr ⟨fun x => piece_ok _ 192 64 (by decide) (by decide) (by decide) (by decide) (by decide) x,
    pieces_385 c M0 f0⟩⟩⟩⟩⟩⟩

theorem pieces_398 (c : Dev nD) (M0 : Memref sig .tc .vmem S64x32768 .f32) (f0 : Bf (F := F) c M0) :
    ∀ p ∈ packRun.sl.H1_398 c M0 f0, ∀ x : p.1.shape.Idx, p.2 x = outOf (packRun.sl.v9 c M0 f0) (p.1.emb x) :=
  List.forall_mem_cons.mpr ⟨fun x => piece_ok _ 198 64 (by decide) (by decide) (by decide) (by decide) (by decide) x,
    List.forall_mem_cons.mpr ⟨fun x => piece_ok _ 198 0 (by decide) (by decide) (by decide) (by decide) (by decide) x,
    List.forall_mem_cons.mpr ⟨fun x => piece_ok _ 197 64 (by decide) (by decide) (by decide) (by decide) (by decide) x,
    List.forall_mem_cons.mpr ⟨fun x => piece_ok _ 197 0 (by decide) (by decide) (by decide) (by decide) (by decide) x,
    List.forall_mem_cons.mpr ⟨fun x => piece_ok _ 196 64 (by decide) (by decide) (by decide) (by decide) (by decide) x,
    List.forall_mem_cons.mpr ⟨fun x => piece_ok _ 196 0 (by decide) (by decide) (by decide) (by decide) (by decide) x,
    List.forall_mem_cons.mpr ⟨fun x => piece_ok _ 195 64 (by decide) (by decide) (by decide) (by decide) (by decide) x,
    pieces_391 c M0 f0⟩⟩⟩⟩⟩⟩⟩

theorem pieces_405 (c : Dev nD) (M0 : Memref sig .tc .vmem S64x32768 .f32) (f0 : Bf (F := F) c M0) :
    ∀ p ∈ packRun.sl.H1_405 c M0 f0, ∀ x : p.1.shape.Idx, p.2 x = outOf (packRun.sl.v9 c M0 f0) (p.1.emb x) :=
  List.forall_mem_cons.mpr ⟨fun x => piece_ok _ 202 0 (by decide) (by decide) (by decide) (by decide) (by decide) x,
    List.forall_mem_cons.mpr ⟨fun x => piece_ok _ 201 64 (by decide) (by decide) (by decide) (by decide) (by decide) x,
    List.forall_mem_cons.mpr ⟨fun x => piece_ok _ 201 0 (by decide) (by decide) (by decide) (by decide) (by decide) x,
    List.forall_mem_cons.mpr ⟨fun x => piece_ok _ 200 64 (by decide) (by decide) (by decide) (by decide) (by decide) x,
    List.forall_mem_cons.mpr ⟨fun x => piece_ok _ 200 0 (by decide) (by decide) (by decide) (by decide) (by decide) x,
    List.forall_mem_cons.mpr ⟨fun x => piece_ok _ 199 64 (by decide) (by decide) (by decide) (by decide) (by decide) x,
    List.forall_mem_cons.mpr ⟨fun x => piece_ok _ 199 0 (by decide) (by decide) (by decide) (by decide) (by decide) x,
    pieces_398 c M0 f0⟩⟩⟩⟩⟩⟩⟩

theorem pieces_411 (c : Dev nD) (M0 : Memref sig .tc .vmem S64x32768 .f32) (f0 : Bf (F := F) c M0) :
    ∀ p ∈ packRun.sl.H1_411 c M0 f0, ∀ x : p.1.shape.Idx, p.2 x = outOf (packRun.sl.v9 c M0 f0) (p.1.emb x) :=
  List.forall_mem_cons.mpr ⟨fun x => piece_ok _ 205 0 (by decide) (by decide) (by decide) (by decide) (by decide) x,
    List.forall_mem_cons.mpr ⟨fun x => piece_ok _ 204 64 (by decide) (by decide) (by decide) (by decide) (by decide) x,
    List.forall_mem_cons.mpr ⟨fun x => piece_ok _ 204 0 (by decide) (by decide) (by decide) (by decide) (by decide) x,
    List.forall_mem_cons.mpr ⟨fun x => piece_ok _ 203 64 (by decide) (by decide) (by decide) (by decide) (by decide) x,
    List.forall_mem_cons.mpr ⟨fun x => piece_ok _ 203 0 (by decide) (by decide) (by decide) (by decide) (by decide) x,
    List.forall_mem_cons.mpr ⟨fun x => piece_ok _ 202 64 (by decide) (by decide) (by decide) (by decide) (by decide) x,
    pieces_405 c M0 f0⟩⟩⟩⟩⟩⟩

theorem pieces_418 (c : Dev nD) (M0 : Memref sig .tc .vmem S64x32768 .f32) (f0 : Bf (F := F) c M0) :
    ∀ p ∈ packRun.sl.H1_418 c M0 f0, ∀ x : p.1.shape.Idx, p.2 x = outOf (packRun.sl.v9 c M0 f0) (p.1.emb x) :=
  List.forall_mem_cons.mpr ⟨fun x => piece_ok _ 208 64 (by decide) (by decide) (by decide) (by decide) (by decide) x,
    List.forall_mem_cons.mpr ⟨fun x => piece_ok _ 208 0 (by decide) (by decide) (by decide) (by decide) (by decide) x,
    List.forall_mem_cons.mpr ⟨fun x => piece_ok _ 207 64 (by decide) (by decide) (by decide) (by decide) (by decide) x,
    List.forall_mem_cons.mpr ⟨fun x => piece_ok _ 207 0 (by decide) (by decide) (by decide) (by decide) (by decide) x,
    List.forall_mem_cons.mpr ⟨fun x => piece_ok _ 206 64 (by decide) (by decide) (by decide) (by decide) (by decide) x,
    List.forall_mem_cons.mpr ⟨fun x => piece_ok _ 206 0 (by decide) (by decide) (by decide) (by decide) (by decide) x,
    List.forall_mem_cons.mpr ⟨fun x => piece_ok _ 205 64 (by decide) (by decide) (by decide) (by decide) (by decide) x,
    pieces_411 c M0 f0⟩⟩⟩⟩⟩⟩⟩

theorem pieces_425 (c : Dev nD) (M0 : Memref sig .tc .vmem S64x32768 .f32) (f0 : Bf (F := F) c M0) :
    ∀ p ∈ packRun.sl.H1_425 c M0 f0, ∀ x : p.1.shape.Idx, p.2 x = outOf (packRun.sl.v9 c M0 f0) (p.1.emb x) :=
  List.forall_mem_cons.mpr ⟨fun x => piece_ok _ 212 0 (by decide) (by decide) (by decide) (by decide) (by decide) x,
    List.forall_mem_cons.mpr ⟨fun x => piece_ok _ 211 64 (by decide) (by decide) (by decide) (by decide) (by decide) x,
    List.forall_mem_cons.mpr ⟨fun x => piece_ok _ 211 0 (by decide) (by decide) (by decide) (by decide) (by decide) x,
    List.forall_mem_cons.mpr ⟨fun x => piece_ok _ 210 64 (by decide) (by decide) (by decide) (by decide) (by decide) x,
    List.forall_mem_cons.mpr ⟨fun x => piece_ok _ 210 0 (by decide) (by decide) (by decide) (by decide) (by decide) x,
    List.forall_mem_cons.mpr ⟨fun x => piece_ok _ 209 64 (by decide) (by decide) (by decide) (by decide) (by decide) x,
    List.forall_mem_cons.mpr ⟨fun x => piece_ok _ 209 0 (by decide) (by decide) (by decide) (by decide) (by decide) x,
    pieces_418 c M0 f0⟩⟩⟩⟩⟩⟩⟩

theorem pieces_431 (c : Dev nD) (M0 : Memref sig .tc .vmem S64x32768 .f32) (f0 : Bf (F := F) c M0) :
    ∀ p ∈ packRun.sl.H1_431 c M0 f0, ∀ x : p.1.shape.Idx, p.2 x = outOf (packRun.sl.v9 c M0 f0) (p.1.emb x) :=
  List.forall_mem_cons.mpr ⟨fun x => piece_ok _ 215 0 (by decide) (by decide) (by decide) (by decide) (by decide) x,
    List.forall_mem_cons.mpr ⟨fun x => piece_ok _ 214 64 (by decide) (by decide) (by decide) (by decide) (by decide) x,
    List.forall_mem_cons.mpr ⟨fun x => piece_ok _ 214 0 (by decide) (by decide) (by decide) (by decide) (by decide) x,
    List.forall_mem_cons.mpr ⟨fun x => piece_ok _ 213 64 (by decide) (by decide) (by decide) (by decide) (by decide) x,
    List.forall_mem_cons.mpr ⟨fun x => piece_ok _ 213 0 (by decide) (by decide) (by decide) (by decide) (by decide) x,
    List.forall_mem_cons.mpr ⟨fun x => piece_ok _ 212 64 (by decide) (by decide) (by decide) (by decide) (by decide) x,
    pieces_425 c M0 f0⟩⟩⟩⟩⟩⟩

theorem pieces_438 (c : Dev nD) (M0 : Memref sig .tc .vmem S64x32768 .f32) (f0 : Bf (F := F) c M0) :
    ∀ p ∈ packRun.sl.H1_438 c M0 f0, ∀ x : p.1.shape.Idx, p.2 x = outOf (packRun.sl.v9 c M0 f0) (p.1.emb x) :=
  List.forall_mem_cons.mpr ⟨fun x => piece_ok _ 218 64 (by decide) (by decide) (by decide) (by decide) (by decide) x,
    List.forall_mem_cons.mpr ⟨fun x => piece_ok _ 218 0 (by decide) (by decide) (by decide) (by decide) (by decide) x,
    List.forall_mem_cons.mpr ⟨fun x => piece_ok _ 217 64 (by decide) (by decide) (by decide) (by decide) (by decide) x,
    List.forall_mem_cons.mpr ⟨fun x => piece_ok _ 217 0 (by decide) (by decide) (by decide) (by decide) (by decide) x,
    List.forall_mem_cons.mpr ⟨fun x => piece_ok _ 216 64 (by decide) (by decide) (by decide) (by decide) (by decide) x,
    List.forall_mem_cons.mpr ⟨fun x => piece_ok _ 216 0 (by decide) (by decide) (by decide) (by decide) (by decide) x,
    List.forall_mem_cons.mpr ⟨fun x => piece_ok _ 215 64 (by decide) (by decide) (by decide) (by decide) (by decide) x,
    pieces_431 c M0 f0⟩⟩⟩⟩⟩⟩⟩

theorem pieces_445 (c : Dev nD) (M0 : Memref sig .tc .vmem S64x32768 .f32) (f0 : Bf (F := F) c M0) :
    ∀ p ∈ packRun.sl.H1_445 c M0 f0, ∀ x : p.1.shape.Idx, p.2 x = outOf (packRun.sl.v9 c M0 f0) (p.1.emb x) :=
  List.forall_mem_cons.mpr ⟨fun x => piece_ok _ 222 0 (by decide) (by decide) (by decide) (by decide) (by decide) x,
    List.forall_mem_cons.mpr ⟨fun x => piece_ok _ 221 64 (by decide) (by decide) (by decide) (by decide) (by decide) x,
    List.forall_mem_cons.mpr ⟨fun x => piece_ok _ 221 0 (by decide) (by decide) (by decide) (by decide) (by decide) x,
    List.forall_mem_cons.mpr ⟨fun x => piece_ok _ 220 64 (by decide) (by decide) (by decide) (by decide) (by decide) x,
    List.forall_mem_cons.mpr ⟨fun x => piece_ok _ 220 0 (by decide) (by decide) (by decide) (by decide) (by decide) x,
    List.forall_mem_cons.mpr ⟨fun x => piece_ok _ 219 64 (by decide) (by decide) (by decide) (by decide) (by decide) x,
    List.forall_mem_cons.mpr ⟨fun x => piece_ok _ 219 0 (by decide) (by decide) (by decide) (by decide) (by decide) x,
    pieces_438 c M0 f0⟩⟩⟩⟩⟩⟩⟩

theorem pieces_451 (c : Dev nD) (M0 : Memref sig .tc .vmem S64x32768 .f32) (f0 : Bf (F := F) c M0) :
    ∀ p ∈ packRun.sl.H1_451 c M0 f0, ∀ x : p.1.shape.Idx, p.2 x = outOf (packRun.sl.v9 c M0 f0) (p.1.emb x) :=
  List.forall_mem_cons.mpr ⟨fun x => piece_ok _ 225 0 (by decide) (by decide) (by decide) (by decide) (by decide) x,
    List.forall_mem_cons.mpr ⟨fun x => piece_ok _ 224 64 (by decide) (by decide) (by decide) (by decide) (by decide) x,
    List.forall_mem_cons.mpr ⟨fun x => piece_ok _ 224 0 (by decide) (by decide) (by decide) (by decide) (by decide) x,
    List.forall_mem_cons.mpr ⟨fun x => piece_ok _ 223 64 (by decide) (by decide) (by decide) (by decide) (by decide) x,
    List.forall_mem_cons.mpr ⟨fun x => piece_ok _ 223 0 (by decide) (by decide) (by decide) (by decide) (by decide) x,
    List.forall_mem_cons.mpr ⟨fun x => piece_ok _ 222 64 (by decide) (by decide) (by decide) (by decide) (by decide) x,
    pieces_445 c M0 f0⟩⟩⟩⟩⟩⟩

theorem pieces_458 (c : Dev nD) (M0 : Memref sig .tc .vmem S64x32768 .f32) (f0 : Bf (F := F) c M0) :
    ∀ p ∈ packRun.sl.H1_458 c M0 f0, ∀ x : p.1.shape.Idx, p.2 x = outOf (packRun.sl.v9 c M0 f0) (p.1.emb x) :=
  List.forall_mem_cons.mpr ⟨fun x => piece_ok _ 228 64 (by decide) (by decide) (by decide) (by decide) (by decide) x,
    List.forall_mem_cons.mpr ⟨fun x => piece_ok _ 228 0 (by decide) (by decide) (by decide) (by decide) (by decide) x,
    List.forall_mem_cons.mpr ⟨fun x => piece_ok _ 227 64 (by decide) (by decide) (by decide) (by decide) (by decide) x,
    List.forall_mem_cons.mpr ⟨fun x => piece_ok _ 227 0 (by decide) (by decide) (by decide) (by decide) (by decide) x,
    List.forall_mem_cons.mpr ⟨fun x => piece_ok _ 226 64 (by decide) (by decide) (by decide) (by decide) (by decide) x,
    List.forall_mem_cons.mpr ⟨fun x => piece_ok _ 226 0 (by decide) (by decide) (by decide) (by decide) (by decide) x,
    List.forall_mem_cons.mpr ⟨fun x => piece_ok _ 225 64 (by decide) (by decide) (by decide) (by decide) (by decide) x,
    pieces_451 c M0 f0⟩⟩⟩⟩⟩⟩⟩

theorem pieces_465 (c : Dev nD) (M0 : Memref sig .tc .vmem S64x32768 .f32) (f0 : Bf (F := F) c M0) :
    ∀ p ∈ packRun.sl.H1_465 c M0 f0, ∀ x : p.1.shape.Idx, p.2 x = outOf (packRun.sl.v9 c M0 f0) (p.1.emb x) :=
  List.forall_mem_cons.mpr ⟨fun x => piece_ok _ 232 0 (by decide) (by decide) (by decide) (by decide) (by decide) x,
    List.forall_mem_cons.mpr ⟨fun x => piece_ok _ 231 64 (by decide) (by decide) (by decide) (by decide) (by decide) x,
    List.forall_mem_cons.mpr ⟨fun x => piece_ok _ 231 0 (by decide) (by decide) (by decide) (by decide) (by decide) x,
    List.forall_mem_cons.mpr ⟨fun x => piece_ok _ 230 64 (by decide) (by decide) (by decide) (by decide) (by decide) x,
    List.forall_mem_cons.mpr ⟨fun x => piece_ok _ 230 0 (by decide) (by decide) (by decide) (by decide) (by decide) x,
    List.forall_mem_cons.mpr ⟨fun x => piece_ok _ 229 64 (by decide) (by decide) (by decide) (by decide) (by decide) x,
    List.forall_mem_cons.mpr ⟨fun x => piece_ok _ 229 0 (by decide) (by decide) (by decide) (by decide) (by decide) x,
    pieces_458 c M0 f0⟩⟩⟩⟩⟩⟩⟩

theorem pieces_471 (c : Dev nD) (M0 : Memref sig .tc .vmem S64x32768 .f32) (f0 : Bf (F := F) c M0) :
    ∀ p ∈ packRun.sl.H1_471 c M0 f0, ∀ x : p.1.shape.Idx, p.2 x = outOf (packRun.sl.v9 c M0 f0) (p.1.emb x) :=
  List.forall_mem_cons.mpr ⟨fun x => piece_ok _ 235 0 (by decide) (by decide) (by decide) (by decide) (by decide) x,
    List.forall_mem_cons.mpr ⟨fun x => piece_ok _ 234 64 (by decide) (by decide) (by decide) (by decide) (by decide) x,
    List.forall_mem_cons.mpr ⟨fun x => piece_ok _ 234 0 (by decide) (by decide) (by decide) (by decide) (by decide) x,
    List.forall_mem_cons.mpr ⟨fun x => piece_ok _ 233 64 (by decide) (by decide) (by decide) (by decide) (by decide) x,
    List.forall_mem_cons.mpr ⟨fun x => piece_ok _ 233 0 (by decide) (by decide) (by decide) (by decide) (by decide) x,
    List.forall_mem_cons.mpr ⟨fun x => piece_ok _ 232 64 (by decide) (by decide) (by decide) (by decide) (by decide) x,
    pieces_465 c M0 f0⟩⟩⟩⟩⟩⟩

theorem pieces_478 (c : Dev nD) (M0 : Memref sig .tc .vmem S64x32768 .f32) (f0 : Bf (F := F) c M0) :
    ∀ p ∈ packRun.sl.H1_478 c M0 f0, ∀ x : p.1.shape.Idx, p.2 x = outOf (packRun.sl.v9 c M0 f0) (p.1.emb x) :=
  List.forall_mem_cons.mpr ⟨fun x => piece_ok _ 238 64 (by decide) (by decide) (by decide) (by decide) (by decide) x,
    List.forall_mem_cons.mpr ⟨fun x => piece_ok _ 238 0 (by decide) (by decide) (by decide) (by decide) (by decide) x,
    List.forall_mem_cons.mpr ⟨fun x => piece_ok _ 237 64 (by decide) (by decide) (by decide) (by decide) (by decide) x,
    List.forall_mem_cons.mpr ⟨fun x => piece_ok _ 237 0 (by decide) (by decide) (by decide) (by decide) (by decide) x,
    List.forall_mem_cons.mpr ⟨fun x => piece_ok _ 236 64 (by decide) (by decide) (by decide) (by decide) (by decide) x,
    List.forall_mem_cons.mpr ⟨fun x => piece_ok _ 236 0 (by decide) (by decide) (by decide) (by decide) (by decide) x,
    List.forall_mem_cons.mpr ⟨fun x => piece_ok _ 235 64 (by decide) (by decide) (by decide) (by decide) (by decide) x,
    pieces_471 c M0 f0⟩⟩⟩⟩⟩⟩⟩

theorem pieces_485 (c : Dev nD) (M0 : Memref sig .tc .vmem S64x32768 .f32) (f0 : Bf (F := F) c M0) :
    ∀ p ∈ packRun.sl.H1_485 c M0 f0, ∀ x : p.1.shape.Idx, p.2 x = outOf (packRun.sl.v9 c M0 f0) (p.1.emb x) :=
  List.forall_mem_cons.mpr ⟨fun x => piece_ok _ 242 0 (by decide) (by decide) (by decide) (by decide) (by decide) x,
    List.forall_mem_cons.mpr ⟨fun x => piece_ok _ 241 64 (by decide) (by decide) (by decide) (by decide) (by decide) x,
    List.forall_mem_cons.mpr ⟨fun x => piece_ok _ 241 0 (by decide) (by decide) (by decide) (by decide) (by decide) x,
    List.forall_mem_cons.mpr ⟨fun x => piece_ok _ 240 64 (by decide) (by decide) (by decide) (by decide) (by decide) x,
    List.forall_mem_cons.mpr ⟨fun x => piece_ok _ 240 0 (by decide) (by decide) (by decide) (by decide) (by decide) x,
    List.forall_mem_cons.mpr ⟨fun x => piece_ok _ 239 64 (by decide) (by decide) (by decide) (by decide) (by decide) x,
    List.forall_mem_cons.mpr ⟨fun x => piece_ok _ 239 0 (by decide) (by decide) (by decide) (by decide) (by decide) x,
    pieces_478 c M0 f0⟩⟩⟩⟩⟩⟩⟩

theorem pieces_491 (c : Dev nD) (M0 : Memref sig .tc .vmem S64x32768 .f32) (f0 : Bf (F := F) c M0) :
    ∀ p ∈ packRun.sl.H1_491 c M0 f0, ∀ x : p.1.shape.Idx, p.2 x = outOf (packRun.sl.v9 c M0 f0) (p.1.emb x) :=
  List.forall_mem_cons.mpr ⟨fun x => piece_ok _ 245 0 (by decide) (by decide) (by decide) (by decide) (by decide) x,
    List.forall_mem_cons.mpr ⟨fun x => piece_ok _ 244 64 (by decide) (by decide) (by decide) (by decide) (by decide) x,
    List.forall_mem_cons.mpr ⟨fun x => piece_ok _ 244 0 (by decide) (by decide) (by decide) (by decide) (by decide) x,
    List.forall_mem_cons.mpr ⟨fun x => piece_ok _ 243 64 (by decide) (by decide) (by decide) (by decide) (by decide) x,
    List.forall_mem_cons.mpr ⟨fun x => piece_ok _ 243 0 (by decide) (by decide) (by decide) (by decide) (by decide) x,
    List.forall_mem_cons.mpr ⟨fun x => piece_ok _ 242 64 (by decide) (by decide) (by decide) (by decide) (by decide) x,
    pieces_485 c M0 f0⟩⟩⟩⟩⟩⟩

theorem pieces_498 (c : Dev nD) (M0 : Memref sig .tc .vmem S64x32768 .f32) (f0 : Bf (F := F) c M0) :
    ∀ p ∈ packRun.sl.H1_498 c M0 f0, ∀ x : p.1.shape.Idx, p.2 x = outOf (packRun.sl.v9 c M0 f0) (p.1.emb x) :=
  List.forall_mem_cons.mpr ⟨fun x => piece_ok _ 248 64 (by decide) (by decide) (by decide) (by decide) (by decide) x,
    List.forall_mem_cons.mpr ⟨fun x => piece_ok _ 248 0 (by decide) (by decide) (by decide) (by decide) (by decide) x,
    List.forall_mem_cons.mpr ⟨fun x => piece_ok _ 247 64 (by decide) (by decide) (by decide) (by decide) (by decide) x,
    List.forall_mem_cons.mpr ⟨fun x => piece_ok _ 247 0 (by decide) (by decide) (by decide) (by decide) (by decide) x,
    List.forall_mem_cons.mpr ⟨fun x => piece_ok _ 246 64 (by decide) (by decide) (by decide) (by decide) (by decide) x,
    List.forall_mem_cons.mpr ⟨fun x => piece_ok _ 246 0 (by decide) (by decide) (by decide) (by decide) (by decide) x,
    List.forall_mem_cons.mpr ⟨fun x => piece_ok _ 245 64 (by decide) (by decide) (by decide) (by decide) (by decide) x,
    pieces_491 c M0 f0⟩⟩⟩⟩⟩⟩⟩

theorem pieces_505 (c : Dev nD) (M0 : Memref sig .tc .vmem S64x32768 .f32) (f0 : Bf (F := F) c M0) :
    ∀ p ∈ packRun.sl.H1_505 c M0 f0, ∀ x : p.1.shape.Idx, p.2 x = outOf (packRun.sl.v9 c M0 f0) (p.1.emb x) :=
  List.forall_mem_cons.mpr ⟨fun x => piece_ok _ 252 0 (by decide) (by decide) (by decide) (by decide) (by decide) x,
    List.forall_mem_cons.mpr ⟨fun x => piece_ok _ 251 64 (by decide) (by decide) (by decide) (by decide) (by decide) x,
    List.forall_mem_cons.mpr ⟨fun x => piece_ok _ 251 0 (by decide) (by decide) (by decide) (by decide) (by decide) x,
    List.forall_mem_cons.mpr ⟨fun x => piece_ok _ 250 64 (by decide) (by decide) (by decide) (by decide) (by decide) x,
    List.forall_mem_cons.mpr ⟨fun x => piece_ok _ 250 0 (by decide) (by decide) (by decide) (by decide) (by decide) x,
    List.forall_mem_cons.mpr ⟨fun x => piece_ok _ 249 64 (by decide) (by decide) (by decide) (by decide) (by decide) x,
    List.forall_mem_cons.mpr ⟨fun x => piece_ok _ 249 0 (by decide) (by decide) (by decide) (by decide) (by decide) x,
    pieces_498 c M0 f0⟩⟩⟩⟩⟩⟩⟩

theorem pieces_512 (c : Dev nD) (M0 : Memref sig .tc .vmem S64x32768 .f32) (f0 : Bf (F := F) c M0) :
    ∀ p ∈ packRun.sl.H1_512 c M0 f0, ∀ x : p.1.shape.Idx, p.2 x = outOf (packRun.sl.v9 c M0 f0) (p.1.emb x) :=
  List.forall_mem_cons.mpr ⟨fun x => piece_ok _ 255 64 (by decide) (by decide) (by decide) (by decide) (by decide) x,
    List.forall_mem_cons.mpr ⟨fun x => piece_ok _ 255 0 (by decide) (by decide) (by decide) (by decide) (by decide) x,
    List.forall_mem_cons.mpr ⟨fun x => piece_ok _ 254 64 (by decide) (by decide) (by decide) (by decide) (by decide) x,
    List.forall_mem_cons.mpr ⟨fun x => piece_ok _ 254 0 (by decide) (by decide) (by decide) (by decide) (by decide) x,
    List.forall_mem_cons.mpr ⟨fun x => piece_ok _ 253 64 (by decide) (by decide) (by decide) (by decide) (by decide) x,
    List.forall_mem_cons.mpr ⟨fun x => piece_ok _ 253 0 (by decide) (by decide) (by decide) (by decide) (by decide) x,
    List.forall_mem_cons.mpr ⟨fun x => piece_ok _ 252 64 (by decide) (by decide) (by decide) (by decide) (by decide) x,
    pieces_505 c M0 f0⟩⟩⟩⟩⟩⟩⟩

/-- A block index lies in the rectangle of the store numbered by its sub-block and column half. -/
theorem mem_piece (y : S1x256x64x128.Idx) (s q : ℕ)
    (inb : ∀ a, (![0, s, 0, q] : Fin 4 → ℕ) a + S1x1x64x64.size a ≤ S1x256x64x128.size a) (hq : q = 0 ∨ q = 64)
    (h : 2 * (y 1).val + (y 3).val / 64 = 2 * s + q / 64) :
    y ∈ (Rect.unit (s := S1x256x64x128) ![0, s, 0, q] S1x1x64x64.size inb).set := by
  have h0 : (y 0).val < 1 := (y 0).isLt
  have h2 : (y 2).val < 64 := (y 2).isLt
  have h3 : (y 3).val < 128 := (y 3).isLt
  rw [Rect.mem_set_unit]
  intro a
  match a with
  | ⟨0, _⟩ => show 0 ≤ (y 0).val ∧ (y 0).val < 0 + 1; omega
  | ⟨1, _⟩ => show s ≤ (y 1).val ∧ (y 1).val < s + 1; rcases hq with rfl | rfl <;> omega
  | ⟨2, _⟩ => show 0 ≤ (y 2).val ∧ (y 2).val < 0 + 64; omega
  | ⟨3, _⟩ => show q ≤ (y 3).val ∧ (y 3).val < q + 64; rcases hq with rfl | rfl <;> omega

theorem cov_5 (c : Dev nD) (M0 : Memref sig .tc .vmem S64x32768 .f32) (f0 : Bf (F := F) c M0) (y : S1x256x64x128.Idx)
    (hy : 2 * (y 1).val + (y 3).val / 64 < 5) : ∃ p ∈ packRun.sl.H1_5 c M0 f0, y ∈ p.1.set := by
  by_cases hlt : 2 * (y 1).val + (y 3).val / 64 < 0
  · exact absurd hlt (Nat.not_lt_zero _)
  · rcases (show 2 * (y 1).val + (y 3).val / 64 = 0 ∨ 2 * (y 1).val + (y 3).val / 64 = 1 ∨ 2 * (y 1).val + (y 3).val / 64 = 2 ∨ 2 * (y 1).val + (y 3).val / 64 = 3 ∨ 2 * (y 1).val + (y 3).val / 64 = 4 from by omega) with h | h | h | h | h
    · exact ⟨_, List.mem_cons_of_mem _ (List.mem_cons_of_mem _ (List.mem_cons_of_mem _ (List.mem_cons_of_mem _ (List.mem_cons_self)))), mem_piece y 0 0 (by decide) (by decide) (by omega)⟩
    · exact ⟨_, List.mem_cons_of_mem _ (List.mem_cons_of_mem _ (List.mem_cons_of_mem _ (List.mem_cons_self))), mem_piece y 0 64 (by decide) (by decide) (by omega)⟩
    · exact ⟨_, List.mem_cons_of_mem _ (List.mem_cons_of_mem _ (List.mem_cons_self)), mem_piece y 1 0 (by decide) (by decide) (by omega)⟩
    · exact ⟨_, List.mem_cons_of_mem _ (List.mem_cons_self), mem_piece y 1 64 (by decide) (by decide) (by omega)⟩
    · exact ⟨_, List.mem_cons_self, mem_piece y 2 0 (by decide) (by decide) (by omega)⟩

theorem cov_11 (c : Dev nD) (M0 : Memref sig .tc .vmem S64x32768 .f32) (f0 : Bf (F := F) c M0) (y : S1x256x64x128.Idx)
    (hy : 2 * (y 1).val + (y 3).val / 64 < 11) : ∃ p ∈ packRun.sl.H1_11 c M0 f0, y ∈ p.1.set := by
  by_cases hlt : 2 * (y 1).val + (y 3).val / 64 < 5
  · obtain ⟨p, hp, hm⟩ := cov_5 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 5 ∨ 2 * (y 1).val + (y 3).val / 64 = 6 ∨ 2 * (y 1).val + (y 3).val / 64 = 7 ∨ 2 * (y 1).val + (y 3).val / 64 = 8 ∨ 2 * (y 1).val + (y 3).val / 64 = 9 ∨ 2 * (y 1).val + (y 3).val / 64 = 10 from by omega) with h | h | h | h | h | h
    · exact ⟨_, List.mem_cons_of_mem _ (List.mem_cons_of_mem _ (List.mem_cons_of_mem _ (List.mem_cons_of_mem _ (List.mem_cons_of_mem _ (List.mem_cons_self))))), mem_piece y 2 64 (by decide) (by decide) (by omega)⟩
    · exact ⟨_, List.mem_cons_of_mem _ (List.mem_cons_of_mem _ (List.mem_cons_of_mem _ (List.mem_cons_of_mem _ (List.mem_cons_self)))), mem_piece y 3 0 (by decide) (by decide) (by omega)⟩
    · exact ⟨_, List.mem_cons_of_mem _ (List.mem_cons_of_mem _ (List.mem_cons_of_mem _ (List.mem_cons_self))), mem_piece y 3 64 (by decide) (by decide) (by omega)⟩
    · exact ⟨_, List.mem_cons_of_mem _ (List.mem_cons_of_mem _ (List.mem_cons_self)), mem_piece y 4 0 (by decide) (by decide) (by omega)⟩
    · exact ⟨_, List.mem_cons_of_mem _ (List.mem_cons_self), mem_piece y 4 64 (by decide) (by decide) (by omega)⟩
    · exact ⟨_, List.mem_cons_self, mem_piece y 5 0 (by decide) (by decide) (by omega)⟩

theorem cov_18 (c : Dev nD) (M0 : Memref sig .tc .vmem S64x32768 .f32) (f0 : Bf (F := F) c M0) (y : S1x256x64x128.Idx)
    (hy : 2 * (y 1).val + (y 3).val / 64 < 18) : ∃ p ∈ packRun.sl.H1_18 c M0 f0, y ∈ p.1.set := by
  by_cases hlt : 2 * (y 1).val + (y 3).val / 64 < 11
  · obtain ⟨p, hp, hm⟩ := cov_11 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 11 ∨ 2 * (y 1).val + (y 3).val / 64 = 12 ∨ 2 * (y 1).val + (y 3).val / 64 = 13 ∨ 2 * (y 1).val + (y 3).val / 64 = 14 ∨ 2 * (y 1).val + (y 3).val / 64 = 15 ∨ 2 * (y 1).val + (y 3).val / 64 = 16 ∨ 2 * (y 1).val + (y 3).val / 64 = 17 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 5 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 6 0 (by decide) (by decide) (by omega)⟩
    · exact ⟨_, List.mem_cons_of_mem _ (List.mem_cons_of_mem _ (List.mem_cons_of_mem _ (List.mem_cons_of_mem _ (List.mem_cons_self)))), mem_piece y 6 64 (by decide) (by decide) (by omega)⟩
    · exact ⟨_, List.mem_cons_of_mem _ (List.mem_cons_of_mem _ (List.mem_cons_of_mem _ (List.mem_cons_self))), mem_piece y 7 0 (by decide) (by decide) (by omega)⟩
    · exact ⟨_, List.mem_cons_of_mem _ (List.mem_cons_of_mem _ (List.mem_cons_self)), mem_piece y 7 64 (by decide) (by decide) (by omega)⟩
    · exact ⟨_, List.mem_cons_of_mem _ (List.mem_cons_self), mem_piece y 8 0 (by decide) (by decide) (by omega)⟩
    · exact ⟨_, List.mem_cons_self, mem_piece y 8 64 (by decide) (by decide) (by omega)⟩

theorem cov_25 (c : Dev nD) (M0 : Memref sig .tc .vmem S64x32768 .f32) (f0 : Bf (F := F) c M0) (y : S1x256x64x128.Idx)
    (hy : 2 * (y 1).val + (y 3).val / 64 < 25) : ∃ p ∈ packRun.sl.H1_25 c M0 f0, y ∈ p.1.set := by
  by_cases hlt : 2 * (y 1).val + (y 3).val / 64 < 18
  · obtain ⟨p, hp, hm⟩ := cov_18 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 18 ∨ 2 * (y 1).val + (y 3).val / 64 = 19 ∨ 2 * (y 1).val + (y 3).val / 64 = 20 ∨ 2 * (y 1).val + (y 3).val / 64 = 21 ∨ 2 * (y 1).val + (y 3).val / 64 = 22 ∨ 2 * (y 1).val + (y 3).val / 64 = 23 ∨ 2 * (y 1).val + (y 3).val / 64 = 24 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 9 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 9 64 (by decide) (by decide) (by omega)⟩
    · exact ⟨_, List.mem_cons_of_mem _ (List.mem_cons_of_mem _ (List.mem_cons_of_mem _ (List.mem_cons_of_mem _ (List.mem_cons_self)))), mem_piece y 10 0 (by decide) (by decide) (by omega)⟩
    · exact ⟨_, List.mem_cons_of_mem _ (List.mem_cons_of_mem _ (List.mem_cons_of_mem _ (List.mem_cons_self))), mem_piece y 10 64 (by decide) (by decide) (by omega)⟩
    · exact ⟨_, List.mem_cons_of_mem _ (List.mem_cons_of_mem _ (List.mem_cons_self)), mem_piece y 11 0 (by decide) (by decide) (by omega)⟩
    · exact ⟨_, List.mem_cons_of_mem _ (List.mem_cons_self), mem_piece y 11 64 (by decide) (by decide) (by omega)⟩
    · exact ⟨_, List.mem_cons_self, mem_piece y 12 0 (by decide) (by decide) (by omega)⟩

theorem cov_31 (c : Dev nD) (M0 : Memref sig .tc .vmem S64x32768 .f32) (f0 : Bf (F := F) c M0) (y : S1x256x64x128.Idx)
    (hy : 2 * (y 1).val + (y 3).val / 64 < 31) : ∃ p ∈ packRun.sl.H1_31 c M0 f0, y ∈ p.1.set := by
  by_cases hlt : 2 * (y 1).val + (y 3).val / 64 < 25
  · obtain ⟨p, hp, hm⟩ := cov_25 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 25 ∨ 2 * (y 1).val + (y 3).val / 64 = 26 ∨ 2 * (y 1).val + (y 3).val / 64 = 27 ∨ 2 * (y 1).val + (y 3).val / 64 = 28 ∨ 2 * (y 1).val + (y 3).val / 64 = 29 ∨ 2 * (y 1).val + (y 3).val / 64 = 30 from by omega) with h | h | h | h | h | h
    · exact ⟨_, List.mem_cons_of_mem _ (List.mem_cons_of_mem _ (List.mem_cons_of_mem _ (List.mem_cons_of_mem _ (List.mem_cons_of_mem _ (List.mem_cons_self))))), mem_piece y 12 64 (by decide) (by decide) (by omega)⟩
    · exact ⟨_, List.mem_cons_of_mem _ (List.mem_cons_of_mem _ (List.mem_cons_of_mem _ (List.mem_cons_of_mem _ (List.mem_cons_self)))), mem_piece y 13 0 (by decide) (by decide) (by omega)⟩
    · exact ⟨_, List.mem_cons_of_mem _ (List.mem_cons_of_mem _ (List.mem_cons_of_mem _ (List.mem_cons_self))), mem_piece y 13 64 (by decide) (by decide) (by omega)⟩
    · exact ⟨_, List.mem_cons_of_mem _ (List.mem_cons_of_mem _ (List.mem_cons_self)), mem_piece y 14 0 (by decide) (by decide) (by omega)⟩
    · exact ⟨_, List.mem_cons_of_mem _ (List.mem_cons_self), mem_piece y 14 64 (by decide) (by decide) (by omega)⟩
    · exact ⟨_, List.mem_cons_self, mem_piece y 15 0 (by decide) (by decide) (by omega)⟩

theorem cov_38 (c : Dev nD) (M0 : Memref sig .tc .vmem S64x32768 .f32) (f0 : Bf (F := F) c M0) (y : S1x256x64x128.Idx)
    (hy : 2 * (y 1).val + (y 3).val / 64 < 38) : ∃ p ∈ packRun.sl.H1_38 c M0 f0, y ∈ p.1.set := by
  by_cases hlt : 2 * (y 1).val + (y 3).val / 64 < 31
  · obtain ⟨p, hp, hm⟩ := cov_31 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 31 ∨ 2 * (y 1).val + (y 3).val / 64 = 32 ∨ 2 * (y 1).val + (y 3).val / 64 = 33 ∨ 2 * (y 1).val + (y 3).val / 64 = 34 ∨ 2 * (y 1).val + (y 3).val / 64 = 35 ∨ 2 * (y 1).val + (y 3).val / 64 = 36 ∨ 2 * (y 1).val + (y 3).val / 64 = 37 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 15 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 16 0 (by decide) (by decide) (by omega)⟩
    · exact ⟨_, List.mem_cons_of_mem _ (List.mem_cons_of_mem _ (List.mem_cons_of_mem _ (List.mem_cons_of_mem _ (List.mem_cons_self)))), mem_piece y 16 64 (by decide) (by decide) (by omega)⟩
    · exact ⟨_, List.mem_cons_of_mem _ (List.mem_cons_of_mem _ (List.mem_cons_of_mem _ (List.mem_cons_self))), mem_piece y 17 0 (by decide) (by decide) (by omega)⟩
    · exact ⟨_, List.mem_cons_of_mem _ (List.mem_cons_of_mem _ (List.mem_cons_self)), mem_piece y 17 64 (by decide) (by decide) (by omega)⟩
    · exact ⟨_, List.mem_cons_of_mem _ (List.mem_cons_self), mem_piece y 18 0 (by decide) (by decide) (by omega)⟩
    · exact ⟨_, List.mem_cons_self, mem_piece y 18 64 (by decide) (by decide) (by omega)⟩

theorem cov_45 (c : Dev nD) (M0 : Memref sig .tc .vmem S64x32768 .f32) (f0 : Bf (F := F) c M0) (y : S1x256x64x128.Idx)
    (hy : 2 * (y 1).val + (y 3).val / 64 < 45) : ∃ p ∈ packRun.sl.H1_45 c M0 f0, y ∈ p.1.set := by
  by_cases hlt : 2 * (y 1).val + (y 3).val / 64 < 38
  · obtain ⟨p, hp, hm⟩ := cov_38 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 38 ∨ 2 * (y 1).val + (y 3).val / 64 = 39 ∨ 2 * (y 1).val + (y 3).val / 64 = 40 ∨ 2 * (y 1).val + (y 3).val / 64 = 41 ∨ 2 * (y 1).val + (y 3).val / 64 = 42 ∨ 2 * (y 1).val + (y 3).val / 64 = 43 ∨ 2 * (y 1).val + (y 3).val / 64 = 44 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 19 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 19 64 (by decide) (by decide) (by omega)⟩
    · exact ⟨_, List.mem_cons_of_mem _ (List.mem_cons_of_mem _ (List.mem_cons_of_mem _ (List.mem_cons_of_mem _ (List.mem_cons_self)))), mem_piece y 20 0 (by decide) (by decide) (by omega)⟩
    · exact ⟨_, List.mem_cons_of_mem _ (List.mem_cons_of_mem _ (List.mem_cons_of_mem _ (List.mem_cons_self))), mem_piece y 20 64 (by decide) (by decide) (by omega)⟩
    · exact ⟨_, List.mem_cons_of_mem _ (List.mem_cons_of_mem _ (List.mem_cons_self)), mem_piece y 21 0 (by decide) (by decide) (by omega)⟩
    · exact ⟨_, List.mem_cons_of_mem _ (List.mem_cons_self), mem_piece y 21 64 (by decide) (by decide) (by omega)⟩
    · exact ⟨_, List.mem_cons_self, mem_piece y 22 0 (by decide) (by decide) (by omega)⟩

theorem cov_51 (c : Dev nD) (M0 : Memref sig .tc .vmem S64x32768 .f32) (f0 : Bf (F := F) c M0) (y : S1x256x64x128.Idx)
    (hy : 2 * (y 1).val + (y 3).val / 64 < 51) : ∃ p ∈ packRun.sl.H1_51 c M0 f0, y ∈ p.1.set := by
  by_cases hlt : 2 * (y 1).val + (y 3).val / 64 < 45
  · obtain ⟨p, hp, hm⟩ := cov_45 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 45 ∨ 2 * (y 1).val + (y 3).val / 64 = 46 ∨ 2 * (y 1).val + (y 3).val / 64 = 47 ∨ 2 * (y 1).val + (y 3).val / 64 = 48 ∨ 2 * (y 1).val + (y 3).val / 64 = 49 ∨ 2 * (y 1).val + (y 3).val / 64 = 50 from by omega) with h | h | h | h | h | h
    · exact ⟨_, List.mem_cons_of_mem _ (List.mem_cons_of_mem _ (List.mem_cons_of_mem _ (List.mem_cons_of_mem _ (List.mem_cons_of_mem _ (List.mem_cons_self))))), mem_piece y 22 64 (by decide) (by decide) (by omega)⟩
    · exact ⟨_, List.mem_cons_of_mem _ (List.mem_cons_of_mem _ (List.mem_cons_of_mem _ (List.mem_cons_of_mem _ (List.mem_cons_self)))), mem_piece y 23 0 (by decide) (by decide) (by omega)⟩
    · exact ⟨_, List.mem_cons_of_mem _ (List.mem_cons_of_mem _ (List.mem_cons_of_mem _ (List.mem_cons_self))), mem_piece y 23 64 (by decide) (by decide) (by omega)⟩
    · exact ⟨_, List.mem_cons_of_mem _ (List.mem_cons_of_mem _ (List.mem_cons_self)), mem_piece y 24 0 (by decide) (by decide) (by omega)⟩
    · exact ⟨_, List.mem_cons_of_mem _ (List.mem_cons_self), mem_piece y 24 64 (by decide) (by decide) (by omega)⟩
    · exact ⟨_, List.mem_cons_self, mem_piece y 25 0 (by decide) (by decide) (by omega)⟩

theorem cov_58 (c : Dev nD) (M0 : Memref sig .tc .vmem S64x32768 .f32) (f0 : Bf (F := F) c M0) (y : S1x256x64x128.Idx)
    (hy : 2 * (y 1).val + (y 3).val / 64 < 58) : ∃ p ∈ packRun.sl.H1_58 c M0 f0, y ∈ p.1.set := by
  by_cases hlt : 2 * (y 1).val + (y 3).val / 64 < 51
  · obtain ⟨p, hp, hm⟩ := cov_51 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 51 ∨ 2 * (y 1).val + (y 3).val / 64 = 52 ∨ 2 * (y 1).val + (y 3).val / 64 = 53 ∨ 2 * (y 1).val + (y 3).val / 64 = 54 ∨ 2 * (y 1).val + (y 3).val / 64 = 55 ∨ 2 * (y 1).val + (y 3).val / 64 = 56 ∨ 2 * (y 1).val + (y 3).val / 64 = 57 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 25 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 26 0 (by decide) (by decide) (by omega)⟩
    · exact ⟨_, List.mem_cons_of_mem _ (List.mem_cons_of_mem _ (List.mem_cons_of_mem _ (List.mem_cons_of_mem _ (List.mem_cons_self)))), mem_piece y 26 64 (by decide) (by decide) (by omega)⟩
    · exact ⟨_, List.mem_cons_of_mem _ (List.mem_cons_of_mem _ (List.mem_cons_of_mem _ (List.mem_cons_self))), mem_piece y 27 0 (by decide) (by decide) (by omega)⟩
    · exact ⟨_, List.mem_cons_of_mem _ (List.mem_cons_of_mem _ (List.mem_cons_self)), mem_piece y 27 64 (by decide) (by decide) (by omega)⟩
    · exact ⟨_, List.mem_cons_of_mem _ (List.mem_cons_self), mem_piece y 28 0 (by decide) (by decide) (by omega)⟩
    · exact ⟨_, List.mem_cons_self, mem_piece y 28 64 (by decide) (by decide) (by omega)⟩

theorem cov_65 (c : Dev nD) (M0 : Memref sig .tc .vmem S64x32768 .f32) (f0 : Bf (F := F) c M0) (y : S1x256x64x128.Idx)
    (hy : 2 * (y 1).val + (y 3).val / 64 < 65) : ∃ p ∈ packRun.sl.H1_65 c M0 f0, y ∈ p.1.set := by
  by_cases hlt : 2 * (y 1).val + (y 3).val / 64 < 58
  · obtain ⟨p, hp, hm⟩ := cov_58 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 58 ∨ 2 * (y 1).val + (y 3).val / 64 = 59 ∨ 2 * (y 1).val + (y 3).val / 64 = 60 ∨ 2 * (y 1).val + (y 3).val / 64 = 61 ∨ 2 * (y 1).val + (y 3).val / 64 = 62 ∨ 2 * (y 1).val + (y 3).val / 64 = 63 ∨ 2 * (y 1).val + (y 3).val / 64 = 64 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 29 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 29 64 (by decide) (by decide) (by omega)⟩
    · exact ⟨_, List.mem_cons_of_mem _ (List.mem_cons_of_mem _ (List.mem_cons_of_mem _ (List.mem_cons_of_mem _ (List.mem_cons_self)))), mem_piece y 30 0 (by decide) (by decide) (by omega)⟩
    · exact ⟨_, List.mem_cons_of_mem _ (List.mem_cons_of_mem _ (List.mem_cons_of_mem _ (List.mem_cons_self))), mem_piece y 30 64 (by decide) (by decide) (by omega)⟩
    · exact ⟨_, List.mem_cons_of_mem _ (List.mem_cons_of_mem _ (List.mem_cons_self)), mem_piece y 31 0 (by decide) (by decide) (by omega)⟩
    · exact ⟨_, List.mem_cons_of_mem _ (List.mem_cons_self), mem_piece y 31 64 (by decide) (by decide) (by omega)⟩
    · exact ⟨_, List.mem_cons_self, mem_piece y 32 0 (by decide) (by decide) (by omega)⟩

theorem cov_71 (c : Dev nD) (M0 : Memref sig .tc .vmem S64x32768 .f32) (f0 : Bf (F := F) c M0) (y : S1x256x64x128.Idx)
    (hy : 2 * (y 1).val + (y 3).val / 64 < 71) : ∃ p ∈ packRun.sl.H1_71 c M0 f0, y ∈ p.1.set := by
  by_cases hlt : 2 * (y 1).val + (y 3).val / 64 < 65
  · obtain ⟨p, hp, hm⟩ := cov_65 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 65 ∨ 2 * (y 1).val + (y 3).val / 64 = 66 ∨ 2 * (y 1).val + (y 3).val / 64 = 67 ∨ 2 * (y 1).val + (y 3).val / 64 = 68 ∨ 2 * (y 1).val + (y 3).val / 64 = 69 ∨ 2 * (y 1).val + (y 3).val / 64 = 70 from by omega) with h | h | h | h | h | h
    · exact ⟨_, List.mem_cons_of_mem _ (List.mem_cons_of_mem _ (List.mem_cons_of_mem _ (List.mem_cons_of_mem _ (List.mem_cons_of_mem _ (List.mem_cons_self))))), mem_piece y 32 64 (by decide) (by decide) (by omega)⟩
    · exact ⟨_, List.mem_cons_of_mem _ (List.mem_cons_of_mem _ (List.mem_cons_of_mem _ (List.mem_cons_of_mem _ (List.mem_cons_self)))), mem_piece y 33 0 (by decide) (by decide) (by omega)⟩
    · exact ⟨_, List.mem_cons_of_mem _ (List.mem_cons_of_mem _ (List.mem_cons_of_mem _ (List.mem_cons_self))), mem_piece y 33 64 (by decide) (by decide) (by omega)⟩
    · exact ⟨_, List.mem_cons_of_mem _ (List.mem_cons_of_mem _ (List.mem_cons_self)), mem_piece y 34 0 (by decide) (by decide) (by omega)⟩
    · exact ⟨_, List.mem_cons_of_mem _ (List.mem_cons_self), mem_piece y 34 64 (by decide) (by decide) (by omega)⟩
    · exact ⟨_, List.mem_cons_self, mem_piece y 35 0 (by decide) (by decide) (by omega)⟩

theorem cov_78 (c : Dev nD) (M0 : Memref sig .tc .vmem S64x32768 .f32) (f0 : Bf (F := F) c M0) (y : S1x256x64x128.Idx)
    (hy : 2 * (y 1).val + (y 3).val / 64 < 78) : ∃ p ∈ packRun.sl.H1_78 c M0 f0, y ∈ p.1.set := by
  by_cases hlt : 2 * (y 1).val + (y 3).val / 64 < 71
  · obtain ⟨p, hp, hm⟩ := cov_71 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 71 ∨ 2 * (y 1).val + (y 3).val / 64 = 72 ∨ 2 * (y 1).val + (y 3).val / 64 = 73 ∨ 2 * (y 1).val + (y 3).val / 64 = 74 ∨ 2 * (y 1).val + (y 3).val / 64 = 75 ∨ 2 * (y 1).val + (y 3).val / 64 = 76 ∨ 2 * (y 1).val + (y 3).val / 64 = 77 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 35 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 36 0 (by decide) (by decide) (by omega)⟩
    · exact ⟨_, List.mem_cons_of_mem _ (List.mem_cons_of_mem _ (List.mem_cons_of_mem _ (List.mem_cons_of_mem _ (List.mem_cons_self)))), mem_piece y 36 64 (by decide) (by decide) (by omega)⟩
    · exact ⟨_, List.mem_cons_of_mem _ (List.mem_cons_of_mem _ (List.mem_cons_of_mem _ (List.mem_cons_self))), mem_piece y 37 0 (by decide) (by decide) (by omega)⟩
    · exact ⟨_, List.mem_cons_of_mem _ (List.mem_cons_of_mem _ (List.mem_cons_self)), mem_piece y 37 64 (by decide) (by decide) (by omega)⟩
    · exact ⟨_, List.mem_cons_of_mem _ (List.mem_cons_self), mem_piece y 38 0 (by decide) (by decide) (by omega)⟩
    · exact ⟨_, List.mem_cons_self, mem_piece y 38 64 (by decide) (by decide) (by omega)⟩

theorem cov_85 (c : Dev nD) (M0 : Memref sig .tc .vmem S64x32768 .f32) (f0 : Bf (F := F) c M0) (y : S1x256x64x128.Idx)
    (hy : 2 * (y 1).val + (y 3).val / 64 < 85) : ∃ p ∈ packRun.sl.H1_85 c M0 f0, y ∈ p.1.set := by
  by_cases hlt : 2 * (y 1).val + (y 3).val / 64 < 78
  · obtain ⟨p, hp, hm⟩ := cov_78 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 78 ∨ 2 * (y 1).val + (y 3).val / 64 = 79 ∨ 2 * (y 1).val + (y 3).val / 64 = 80 ∨ 2 * (y 1).val + (y 3).val / 64 = 81 ∨ 2 * (y 1).val + (y 3).val / 64 = 82 ∨ 2 * (y 1).val + (y 3).val / 64 = 83 ∨ 2 * (y 1).val + (y 3).val / 64 = 84 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 39 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 39 64 (by decide) (by decide) (by omega)⟩
    · exact ⟨_, List.mem_cons_of_mem _ (List.mem_cons_of_mem _ (List.mem_cons_of_mem _ (List.mem_cons_of_mem _ (List.mem_cons_self)))), mem_piece y 40 0 (by decide) (by decide) (by omega)⟩
    · exact ⟨_, List.mem_cons_of_mem _ (List.mem_cons_of_mem _ (List.mem_cons_of_mem _ (List.mem_cons_self))), mem_piece y 40 64 (by decide) (by decide) (by omega)⟩
    · exact ⟨_, List.mem_cons_of_mem _ (List.mem_cons_of_mem _ (List.mem_cons_self)), mem_piece y 41 0 (by decide) (by decide) (by omega)⟩
    · exact ⟨_, List.mem_cons_of_mem _ (List.mem_cons_self), mem_piece y 41 64 (by decide) (by decide) (by omega)⟩
    · exact ⟨_, List.mem_cons_self, mem_piece y 42 0 (by decide) (by decide) (by omega)⟩

theorem cov_91 (c : Dev nD) (M0 : Memref sig .tc .vmem S64x32768 .f32) (f0 : Bf (F := F) c M0) (y : S1x256x64x128.Idx)
    (hy : 2 * (y 1).val + (y 3).val / 64 < 91) : ∃ p ∈ packRun.sl.H1_91 c M0 f0, y ∈ p.1.set := by
  by_cases hlt : 2 * (y 1).val + (y 3).val / 64 < 85
  · obtain ⟨p, hp, hm⟩ := cov_85 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 85 ∨ 2 * (y 1).val + (y 3).val / 64 = 86 ∨ 2 * (y 1).val + (y 3).val / 64 = 87 ∨ 2 * (y 1).val + (y 3).val / 64 = 88 ∨ 2 * (y 1).val + (y 3).val / 64 = 89 ∨ 2 * (y 1).val + (y 3).val / 64 = 90 from by omega) with h | h | h | h | h | h
    · exact ⟨_, List.mem_cons_of_mem _ (List.mem_cons_of_mem _ (List.mem_cons_of_mem _ (List.mem_cons_of_mem _ (List.mem_cons_of_mem _ (List.mem_cons_self))))), mem_piece y 42 64 (by decide) (by decide) (by omega)⟩
    · exact ⟨_, List.mem_cons_of_mem _ (List.mem_cons_of_mem _ (List.mem_cons_of_mem _ (List.mem_cons_of_mem _ (List.mem_cons_self)))), mem_piece y 43 0 (by decide) (by decide) (by omega)⟩
    · exact ⟨_, List.mem_cons_of_mem _ (List.mem_cons_of_mem _ (List.mem_cons_of_mem _ (List.mem_cons_self))), mem_piece y 43 64 (by decide) (by decide) (by omega)⟩
    · exact ⟨_, List.mem_cons_of_mem _ (List.mem_cons_of_mem _ (List.mem_cons_self)), mem_piece y 44 0 (by decide) (by decide) (by omega)⟩
    · exact ⟨_, List.mem_cons_of_mem _ (List.mem_cons_self), mem_piece y 44 64 (by decide) (by decide) (by omega)⟩
    · exact ⟨_, List.mem_cons_self, mem_piece y 45 0 (by decide) (by decide) (by omega)⟩

theorem cov_98 (c : Dev nD) (M0 : Memref sig .tc .vmem S64x32768 .f32) (f0 : Bf (F := F) c M0) (y : S1x256x64x128.Idx)
    (hy : 2 * (y 1).val + (y 3).val / 64 < 98) : ∃ p ∈ packRun.sl.H1_98 c M0 f0, y ∈ p.1.set := by
  by_cases hlt : 2 * (y 1).val + (y 3).val / 64 < 91
  · obtain ⟨p, hp, hm⟩ := cov_91 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 91 ∨ 2 * (y 1).val + (y 3).val / 64 = 92 ∨ 2 * (y 1).val + (y 3).val / 64 = 93 ∨ 2 * (y 1).val + (y 3).val / 64 = 94 ∨ 2 * (y 1).val + (y 3).val / 64 = 95 ∨ 2 * (y 1).val + (y 3).val / 64 = 96 ∨ 2 * (y 1).val + (y 3).val / 64 = 97 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 45 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 46 0 (by decide) (by decide) (by omega)⟩
    · exact ⟨_, List.mem_cons_of_mem _ (List.mem_cons_of_mem _ (List.mem_cons_of_mem _ (List.mem_cons_of_mem _ (List.mem_cons_self)))), mem_piece y 46 64 (by decide) (by decide) (by omega)⟩
    · exact ⟨_, List.mem_cons_of_mem _ (List.mem_cons_of_mem _ (List.mem_cons_of_mem _ (List.mem_cons_self))), mem_piece y 47 0 (by decide) (by decide) (by omega)⟩
    · exact ⟨_, List.mem_cons_of_mem _ (List.mem_cons_of_mem _ (List.mem_cons_self)), mem_piece y 47 64 (by decide) (by decide) (by omega)⟩
    · exact ⟨_, List.mem_cons_of_mem _ (List.mem_cons_self), mem_piece y 48 0 (by decide) (by decide) (by omega)⟩
    · exact ⟨_, List.mem_cons_self, mem_piece y 48 64 (by decide) (by decide) (by omega)⟩

theorem cov_105 (c : Dev nD) (M0 : Memref sig .tc .vmem S64x32768 .f32) (f0 : Bf (F := F) c M0) (y : S1x256x64x128.Idx)
    (hy : 2 * (y 1).val + (y 3).val / 64 < 105) : ∃ p ∈ packRun.sl.H1_105 c M0 f0, y ∈ p.1.set := by
  by_cases hlt : 2 * (y 1).val + (y 3).val / 64 < 98
  · obtain ⟨p, hp, hm⟩ := cov_98 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 98 ∨ 2 * (y 1).val + (y 3).val / 64 = 99 ∨ 2 * (y 1).val + (y 3).val / 64 = 100 ∨ 2 * (y 1).val + (y 3).val / 64 = 101 ∨ 2 * (y 1).val + (y 3).val / 64 = 102 ∨ 2 * (y 1).val + (y 3).val / 64 = 103 ∨ 2 * (y 1).val + (y 3).val / 64 = 104 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 49 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 49 64 (by decide) (by decide) (by omega)⟩
    · exact ⟨_, List.mem_cons_of_mem _ (List.mem_cons_of_mem _ (List.mem_cons_of_mem _ (List.mem_cons_of_mem _ (List.mem_cons_self)))), mem_piece y 50 0 (by decide) (by decide) (by omega)⟩
    · exact ⟨_, List.mem_cons_of_mem _ (List.mem_cons_of_mem _ (List.mem_cons_of_mem _ (List.mem_cons_self))), mem_piece y 50 64 (by decide) (by decide) (by omega)⟩
    · exact ⟨_, List.mem_cons_of_mem _ (List.mem_cons_of_mem _ (List.mem_cons_self)), mem_piece y 51 0 (by decide) (by decide) (by omega)⟩
    · exact ⟨_, List.mem_cons_of_mem _ (List.mem_cons_self), mem_piece y 51 64 (by decide) (by decide) (by omega)⟩
    · exact ⟨_, List.mem_cons_self, mem_piece y 52 0 (by decide) (by decide) (by omega)⟩

theorem cov_111 (c : Dev nD) (M0 : Memref sig .tc .vmem S64x32768 .f32) (f0 : Bf (F := F) c M0) (y : S1x256x64x128.Idx)
    (hy : 2 * (y 1).val + (y 3).val / 64 < 111) : ∃ p ∈ packRun.sl.H1_111 c M0 f0, y ∈ p.1.set := by
  by_cases hlt : 2 * (y 1).val + (y 3).val / 64 < 105
  · obtain ⟨p, hp, hm⟩ := cov_105 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 105 ∨ 2 * (y 1).val + (y 3).val / 64 = 106 ∨ 2 * (y 1).val + (y 3).val / 64 = 107 ∨ 2 * (y 1).val + (y 3).val / 64 = 108 ∨ 2 * (y 1).val + (y 3).val / 64 = 109 ∨ 2 * (y 1).val + (y 3).val / 64 = 110 from by omega) with h | h | h | h | h | h
    · exact ⟨_, List.mem_cons_of_mem _ (List.mem_cons_of_mem _ (List.mem_cons_of_mem _ (List.mem_cons_of_mem _ (List.mem_cons_of_mem _ (List.mem_cons_self))))), mem_piece y 52 64 (by decide) (by decide) (by omega)⟩
    · exact ⟨_, List.mem_cons_of_mem _ (List.mem_cons_of_mem _ (List.mem_cons_of_mem _ (List.mem_cons_of_mem _ (List.mem_cons_self)))), mem_piece y 53 0 (by decide) (by decide) (by omega)⟩
    · exact ⟨_, List.mem_cons_of_mem _ (List.mem_cons_of_mem _ (List.mem_cons_of_mem _ (List.mem_cons_self))), mem_piece y 53 64 (by decide) (by decide) (by omega)⟩
    · exact ⟨_, List.mem_cons_of_mem _ (List.mem_cons_of_mem _ (List.mem_cons_self)), mem_piece y 54 0 (by decide) (by decide) (by omega)⟩
    · exact ⟨_, List.mem_cons_of_mem _ (List.mem_cons_self), mem_piece y 54 64 (by decide) (by decide) (by omega)⟩
    · exact ⟨_, List.mem_cons_self, mem_piece y 55 0 (by decide) (by decide) (by omega)⟩

theorem cov_118 (c : Dev nD) (M0 : Memref sig .tc .vmem S64x32768 .f32) (f0 : Bf (F := F) c M0) (y : S1x256x64x128.Idx)
    (hy : 2 * (y 1).val + (y 3).val / 64 < 118) : ∃ p ∈ packRun.sl.H1_118 c M0 f0, y ∈ p.1.set := by
  by_cases hlt : 2 * (y 1).val + (y 3).val / 64 < 111
  · obtain ⟨p, hp, hm⟩ := cov_111 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 111 ∨ 2 * (y 1).val + (y 3).val / 64 = 112 ∨ 2 * (y 1).val + (y 3).val / 64 = 113 ∨ 2 * (y 1).val + (y 3).val / 64 = 114 ∨ 2 * (y 1).val + (y 3).val / 64 = 115 ∨ 2 * (y 1).val + (y 3).val / 64 = 116 ∨ 2 * (y 1).val + (y 3).val / 64 = 117 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 55 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 56 0 (by decide) (by decide) (by omega)⟩
    · exact ⟨_, List.mem_cons_of_mem _ (List.mem_cons_of_mem _ (List.mem_cons_of_mem _ (List.mem_cons_of_mem _ (List.mem_cons_self)))), mem_piece y 56 64 (by decide) (by decide) (by omega)⟩
    · exact ⟨_, List.mem_cons_of_mem _ (List.mem_cons_of_mem _ (List.mem_cons_of_mem _ (List.mem_cons_self))), mem_piece y 57 0 (by decide) (by decide) (by omega)⟩
    · exact ⟨_, List.mem_cons_of_mem _ (List.mem_cons_of_mem _ (List.mem_cons_self)), mem_piece y 57 64 (by decide) (by decide) (by omega)⟩
    · exact ⟨_, List.mem_cons_of_mem _ (List.mem_cons_self), mem_piece y 58 0 (by decide) (by decide) (by omega)⟩
    · exact ⟨_, List.mem_cons_self, mem_piece y 58 64 (by decide) (by decide) (by omega)⟩

theorem cov_125 (c : Dev nD) (M0 : Memref sig .tc .vmem S64x32768 .f32) (f0 : Bf (F := F) c M0) (y : S1x256x64x128.Idx)
    (hy : 2 * (y 1).val + (y 3).val / 64 < 125) : ∃ p ∈ packRun.sl.H1_125 c M0 f0, y ∈ p.1.set := by
  by_cases hlt : 2 * (y 1).val + (y 3).val / 64 < 118
  · obtain ⟨p, hp, hm⟩ := cov_118 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 118 ∨ 2 * (y 1).val + (y 3).val / 64 = 119 ∨ 2 * (y 1).val + (y 3).val / 64 = 120 ∨ 2 * (y 1).val + (y 3).val / 64 = 121 ∨ 2 * (y 1).val + (y 3).val / 64 = 122 ∨ 2 * (y 1).val + (y 3).val / 64 = 123 ∨ 2 * (y 1).val + (y 3).val / 64 = 124 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 59 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 59 64 (by decide) (by decide) (by omega)⟩
    · exact ⟨_, List.mem_cons_of_mem _ (List.mem_cons_of_mem _ (List.mem_cons_of_mem _ (List.mem_cons_of_mem _ (List.mem_cons_self)))), mem_piece y 60 0 (by decide) (by decide) (by omega)⟩
    · exact ⟨_, List.mem_cons_of_mem _ (List.mem_cons_of_mem _ (List.mem_cons_of_mem _ (List.mem_cons_self))), mem_piece y 60 64 (by decide) (by decide) (by omega)⟩
    · exact ⟨_, List.mem_cons_of_mem _ (List.mem_cons_of_mem _ (List.mem_cons_self)), mem_piece y 61 0 (by decide) (by decide) (by omega)⟩
    · exact ⟨_, List.mem_cons_of_mem _ (List.mem_cons_self), mem_piece y 61 64 (by decide) (by decide) (by omega)⟩
    · exact ⟨_, List.mem_cons_self, mem_piece y 62 0 (by decide) (by decide) (by omega)⟩

theorem cov_131 (c : Dev nD) (M0 : Memref sig .tc .vmem S64x32768 .f32) (f0 : Bf (F := F) c M0) (y : S1x256x64x128.Idx)
    (hy : 2 * (y 1).val + (y 3).val / 64 < 131) : ∃ p ∈ packRun.sl.H1_131 c M0 f0, y ∈ p.1.set := by
  by_cases hlt : 2 * (y 1).val + (y 3).val / 64 < 125
  · obtain ⟨p, hp, hm⟩ := cov_125 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 125 ∨ 2 * (y 1).val + (y 3).val / 64 = 126 ∨ 2 * (y 1).val + (y 3).val / 64 = 127 ∨ 2 * (y 1).val + (y 3).val / 64 = 128 ∨ 2 * (y 1).val + (y 3).val / 64 = 129 ∨ 2 * (y 1).val + (y 3).val / 64 = 130 from by omega) with h | h | h | h | h | h
    · exact ⟨_, List.mem_cons_of_mem _ (List.mem_cons_of_mem _ (List.mem_cons_of_mem _ (List.mem_cons_of_mem _ (List.mem_cons_of_mem _ (List.mem_cons_self))))), mem_piece y 62 64 (by decide) (by decide) (by omega)⟩
    · exact ⟨_, List.mem_cons_of_mem _ (List.mem_cons_of_mem _ (List.mem_cons_of_mem _ (List.mem_cons_of_mem _ (List.mem_cons_self)))), mem_piece y 63 0 (by decide) (by decide) (by omega)⟩
    · exact ⟨_, List.mem_cons_of_mem _ (List.mem_cons_of_mem _ (List.mem_cons_of_mem _ (List.mem_cons_self))), mem_piece y 63 64 (by decide) (by decide) (by omega)⟩
    · exact ⟨_, List.mem_cons_of_mem _ (List.mem_cons_of_mem _ (List.mem_cons_self)), mem_piece y 64 0 (by decide) (by decide) (by omega)⟩
    · exact ⟨_, List.mem_cons_of_mem _ (List.mem_cons_self), mem_piece y 64 64 (by decide) (by decide) (by omega)⟩
    · exact ⟨_, List.mem_cons_self, mem_piece y 65 0 (by decide) (by decide) (by omega)⟩

theorem cov_138 (c : Dev nD) (M0 : Memref sig .tc .vmem S64x32768 .f32) (f0 : Bf (F := F) c M0) (y : S1x256x64x128.Idx)
    (hy : 2 * (y 1).val + (y 3).val / 64 < 138) : ∃ p ∈ packRun.sl.H1_138 c M0 f0, y ∈ p.1.set := by
  by_cases hlt : 2 * (y 1).val + (y 3).val / 64 < 131
  · obtain ⟨p, hp, hm⟩ := cov_131 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 131 ∨ 2 * (y 1).val + (y 3).val / 64 = 132 ∨ 2 * (y 1).val + (y 3).val / 64 = 133 ∨ 2 * (y 1).val + (y 3).val / 64 = 134 ∨ 2 * (y 1).val + (y 3).val / 64 = 135 ∨ 2 * (y 1).val + (y 3).val / 64 = 136 ∨ 2 * (y 1).val + (y 3).val / 64 = 137 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 65 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 66 0 (by decide) (by decide) (by omega)⟩
    · exact ⟨_, List.mem_cons_of_mem _ (List.mem_cons_of_mem _ (List.mem_cons_of_mem _ (List.mem_cons_of_mem _ (List.mem_cons_self)))), mem_piece y 66 64 (by decide) (by decide) (by omega)⟩
    · exact ⟨_, List.mem_cons_of_mem _ (List.mem_cons_of_mem _ (List.mem_cons_of_mem _ (List.mem_cons_self))), mem_piece y 67 0 (by decide) (by decide) (by omega)⟩
    · exact ⟨_, List.mem_cons_of_mem _ (List.mem_cons_of_mem _ (List.mem_cons_self)), mem_piece y 67 64 (by decide) (by decide) (by omega)⟩
    · exact ⟨_, List.mem_cons_of_mem _ (List.mem_cons_self), mem_piece y 68 0 (by decide) (by decide) (by omega)⟩
    · exact ⟨_, List.mem_cons_self, mem_piece y 68 64 (by decide) (by decide) (by omega)⟩

theorem cov_145 (c : Dev nD) (M0 : Memref sig .tc .vmem S64x32768 .f32) (f0 : Bf (F := F) c M0) (y : S1x256x64x128.Idx)
    (hy : 2 * (y 1).val + (y 3).val / 64 < 145) : ∃ p ∈ packRun.sl.H1_145 c M0 f0, y ∈ p.1.set := by
  by_cases hlt : 2 * (y 1).val + (y 3).val / 64 < 138
  · obtain ⟨p, hp, hm⟩ := cov_138 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 138 ∨ 2 * (y 1).val + (y 3).val / 64 = 139 ∨ 2 * (y 1).val + (y 3).val / 64 = 140 ∨ 2 * (y 1).val + (y 3).val / 64 = 141 ∨ 2 * (y 1).val + (y 3).val / 64 = 142 ∨ 2 * (y 1).val + (y 3).val / 64 = 143 ∨ 2 * (y 1).val + (y 3).val / 64 = 144 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 69 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 69 64 (by decide) (by decide) (by omega)⟩
    · exact ⟨_, List.mem_cons_of_mem _ (List.mem_cons_of_mem _ (List.mem_cons_of_mem _ (List.mem_cons_of_mem _ (List.mem_cons_self)))), mem_piece y 70 0 (by decide) (by decide) (by omega)⟩
    · exact ⟨_, List.mem_cons_of_mem _ (List.mem_cons_of_mem _ (List.mem_cons_of_mem _ (List.mem_cons_self))), mem_piece y 70 64 (by decide) (by decide) (by omega)⟩
    · exact ⟨_, List.mem_cons_of_mem _ (List.mem_cons_of_mem _ (List.mem_cons_self)), mem_piece y 71 0 (by decide) (by decide) (by omega)⟩
    · exact ⟨_, List.mem_cons_of_mem _ (List.mem_cons_self), mem_piece y 71 64 (by decide) (by decide) (by omega)⟩
    · exact ⟨_, List.mem_cons_self, mem_piece y 72 0 (by decide) (by decide) (by omega)⟩

theorem cov_151 (c : Dev nD) (M0 : Memref sig .tc .vmem S64x32768 .f32) (f0 : Bf (F := F) c M0) (y : S1x256x64x128.Idx)
    (hy : 2 * (y 1).val + (y 3).val / 64 < 151) : ∃ p ∈ packRun.sl.H1_151 c M0 f0, y ∈ p.1.set := by
  by_cases hlt : 2 * (y 1).val + (y 3).val / 64 < 145
  · obtain ⟨p, hp, hm⟩ := cov_145 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 145 ∨ 2 * (y 1).val + (y 3).val / 64 = 146 ∨ 2 * (y 1).val + (y 3).val / 64 = 147 ∨ 2 * (y 1).val + (y 3).val / 64 = 148 ∨ 2 * (y 1).val + (y 3).val / 64 = 149 ∨ 2 * (y 1).val + (y 3).val / 64 = 150 from by omega) with h | h | h | h | h | h
    · exact ⟨_, List.mem_cons_of_mem _ (List.mem_cons_of_mem _ (List.mem_cons_of_mem _ (List.mem_cons_of_mem _ (List.mem_cons_of_mem _ (List.mem_cons_self))))), mem_piece y 72 64 (by decide) (by decide) (by omega)⟩
    · exact ⟨_, List.mem_cons_of_mem _ (List.mem_cons_of_mem _ (List.mem_cons_of_mem _ (List.mem_cons_of_mem _ (List.mem_cons_self)))), mem_piece y 73 0 (by decide) (by decide) (by omega)⟩
    · exact ⟨_, List.mem_cons_of_mem _ (List.mem_cons_of_mem _ (List.mem_cons_of_mem _ (List.mem_cons_self))), mem_piece y 73 64 (by decide) (by decide) (by omega)⟩
    · exact ⟨_, List.mem_cons_of_mem _ (List.mem_cons_of_mem _ (List.mem_cons_self)), mem_piece y 74 0 (by decide) (by decide) (by omega)⟩
    · exact ⟨_, List.mem_cons_of_mem _ (List.mem_cons_self), mem_piece y 74 64 (by decide) (by decide) (by omega)⟩
    · exact ⟨_, List.mem_cons_self, mem_piece y 75 0 (by decide) (by decide) (by omega)⟩

theorem cov_158 (c : Dev nD) (M0 : Memref sig .tc .vmem S64x32768 .f32) (f0 : Bf (F := F) c M0) (y : S1x256x64x128.Idx)
    (hy : 2 * (y 1).val + (y 3).val / 64 < 158) : ∃ p ∈ packRun.sl.H1_158 c M0 f0, y ∈ p.1.set := by
  by_cases hlt : 2 * (y 1).val + (y 3).val / 64 < 151
  · obtain ⟨p, hp, hm⟩ := cov_151 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 151 ∨ 2 * (y 1).val + (y 3).val / 64 = 152 ∨ 2 * (y 1).val + (y 3).val / 64 = 153 ∨ 2 * (y 1).val + (y 3).val / 64 = 154 ∨ 2 * (y 1).val + (y 3).val / 64 = 155 ∨ 2 * (y 1).val + (y 3).val / 64 = 156 ∨ 2 * (y 1).val + (y 3).val / 64 = 157 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 75 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 76 0 (by decide) (by decide) (by omega)⟩
    · exact ⟨_, List.mem_cons_of_mem _ (List.mem_cons_of_mem _ (List.mem_cons_of_mem _ (List.mem_cons_of_mem _ (List.mem_cons_self)))), mem_piece y 76 64 (by decide) (by decide) (by omega)⟩
    · exact ⟨_, List.mem_cons_of_mem _ (List.mem_cons_of_mem _ (List.mem_cons_of_mem _ (List.mem_cons_self))), mem_piece y 77 0 (by decide) (by decide) (by omega)⟩
    · exact ⟨_, List.mem_cons_of_mem _ (List.mem_cons_of_mem _ (List.mem_cons_self)), mem_piece y 77 64 (by decide) (by decide) (by omega)⟩
    · exact ⟨_, List.mem_cons_of_mem _ (List.mem_cons_self), mem_piece y 78 0 (by decide) (by decide) (by omega)⟩
    · exact ⟨_, List.mem_cons_self, mem_piece y 78 64 (by decide) (by decide) (by omega)⟩

theorem cov_165 (c : Dev nD) (M0 : Memref sig .tc .vmem S64x32768 .f32) (f0 : Bf (F := F) c M0) (y : S1x256x64x128.Idx)
    (hy : 2 * (y 1).val + (y 3).val / 64 < 165) : ∃ p ∈ packRun.sl.H1_165 c M0 f0, y ∈ p.1.set := by
  by_cases hlt : 2 * (y 1).val + (y 3).val / 64 < 158
  · obtain ⟨p, hp, hm⟩ := cov_158 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 158 ∨ 2 * (y 1).val + (y 3).val / 64 = 159 ∨ 2 * (y 1).val + (y 3).val / 64 = 160 ∨ 2 * (y 1).val + (y 3).val / 64 = 161 ∨ 2 * (y 1).val + (y 3).val / 64 = 162 ∨ 2 * (y 1).val + (y 3).val / 64 = 163 ∨ 2 * (y 1).val + (y 3).val / 64 = 164 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 79 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 79 64 (by decide) (by decide) (by omega)⟩
    · exact ⟨_, List.mem_cons_of_mem _ (List.mem_cons_of_mem _ (List.mem_cons_of_mem _ (List.mem_cons_of_mem _ (List.mem_cons_self)))), mem_piece y 80 0 (by decide) (by decide) (by omega)⟩
    · exact ⟨_, List.mem_cons_of_mem _ (List.mem_cons_of_mem _ (List.mem_cons_of_mem _ (List.mem_cons_self))), mem_piece y 80 64 (by decide) (by decide) (by omega)⟩
    · exact ⟨_, List.mem_cons_of_mem _ (List.mem_cons_of_mem _ (List.mem_cons_self)), mem_piece y 81 0 (by decide) (by decide) (by omega)⟩
    · exact ⟨_, List.mem_cons_of_mem _ (List.mem_cons_self), mem_piece y 81 64 (by decide) (by decide) (by omega)⟩
    · exact ⟨_, List.mem_cons_self, mem_piece y 82 0 (by decide) (by decide) (by omega)⟩

theorem cov_171 (c : Dev nD) (M0 : Memref sig .tc .vmem S64x32768 .f32) (f0 : Bf (F := F) c M0) (y : S1x256x64x128.Idx)
    (hy : 2 * (y 1).val + (y 3).val / 64 < 171) : ∃ p ∈ packRun.sl.H1_171 c M0 f0, y ∈ p.1.set := by
  by_cases hlt : 2 * (y 1).val + (y 3).val / 64 < 165
  · obtain ⟨p, hp, hm⟩ := cov_165 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 165 ∨ 2 * (y 1).val + (y 3).val / 64 = 166 ∨ 2 * (y 1).val + (y 3).val / 64 = 167 ∨ 2 * (y 1).val + (y 3).val / 64 = 168 ∨ 2 * (y 1).val + (y 3).val / 64 = 169 ∨ 2 * (y 1).val + (y 3).val / 64 = 170 from by omega) with h | h | h | h | h | h
    · exact ⟨_, List.mem_cons_of_mem _ (List.mem_cons_of_mem _ (List.mem_cons_of_mem _ (List.mem_cons_of_mem _ (List.mem_cons_of_mem _ (List.mem_cons_self))))), mem_piece y 82 64 (by decide) (by decide) (by omega)⟩
    · exact ⟨_, List.mem_cons_of_mem _ (List.mem_cons_of_mem _ (List.mem_cons_of_mem _ (List.mem_cons_of_mem _ (List.mem_cons_self)))), mem_piece y 83 0 (by decide) (by decide) (by omega)⟩
    · exact ⟨_, List.mem_cons_of_mem _ (List.mem_cons_of_mem _ (List.mem_cons_of_mem _ (List.mem_cons_self))), mem_piece y 83 64 (by decide) (by decide) (by omega)⟩
    · exact ⟨_, List.mem_cons_of_mem _ (List.mem_cons_of_mem _ (List.mem_cons_self)), mem_piece y 84 0 (by decide) (by decide) (by omega)⟩
    · exact ⟨_, List.mem_cons_of_mem _ (List.mem_cons_self), mem_piece y 84 64 (by decide) (by decide) (by omega)⟩
    · exact ⟨_, List.mem_cons_self, mem_piece y 85 0 (by decide) (by decide) (by omega)⟩

theorem cov_178 (c : Dev nD) (M0 : Memref sig .tc .vmem S64x32768 .f32) (f0 : Bf (F := F) c M0) (y : S1x256x64x128.Idx)
    (hy : 2 * (y 1).val + (y 3).val / 64 < 178) : ∃ p ∈ packRun.sl.H1_178 c M0 f0, y ∈ p.1.set := by
  by_cases hlt : 2 * (y 1).val + (y 3).val / 64 < 171
  · obtain ⟨p, hp, hm⟩ := cov_171 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 171 ∨ 2 * (y 1).val + (y 3).val / 64 = 172 ∨ 2 * (y 1).val + (y 3).val / 64 = 173 ∨ 2 * (y 1).val + (y 3).val / 64 = 174 ∨ 2 * (y 1).val + (y 3).val / 64 = 175 ∨ 2 * (y 1).val + (y 3).val / 64 = 176 ∨ 2 * (y 1).val + (y 3).val / 64 = 177 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 85 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 86 0 (by decide) (by decide) (by omega)⟩
    · exact ⟨_, List.mem_cons_of_mem _ (List.mem_cons_of_mem _ (List.mem_cons_of_mem _ (List.mem_cons_of_mem _ (List.mem_cons_self)))), mem_piece y 86 64 (by decide) (by decide) (by omega)⟩
    · exact ⟨_, List.mem_cons_of_mem _ (List.mem_cons_of_mem _ (List.mem_cons_of_mem _ (List.mem_cons_self))), mem_piece y 87 0 (by decide) (by decide) (by omega)⟩
    · exact ⟨_, List.mem_cons_of_mem _ (List.mem_cons_of_mem _ (List.mem_cons_self)), mem_piece y 87 64 (by decide) (by decide) (by omega)⟩
    · exact ⟨_, List.mem_cons_of_mem _ (List.mem_cons_self), mem_piece y 88 0 (by decide) (by decide) (by omega)⟩
    · exact ⟨_, List.mem_cons_self, mem_piece y 88 64 (by decide) (by decide) (by omega)⟩

theorem cov_185 (c : Dev nD) (M0 : Memref sig .tc .vmem S64x32768 .f32) (f0 : Bf (F := F) c M0) (y : S1x256x64x128.Idx)
    (hy : 2 * (y 1).val + (y 3).val / 64 < 185) : ∃ p ∈ packRun.sl.H1_185 c M0 f0, y ∈ p.1.set := by
  by_cases hlt : 2 * (y 1).val + (y 3).val / 64 < 178
  · obtain ⟨p, hp, hm⟩ := cov_178 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 178 ∨ 2 * (y 1).val + (y 3).val / 64 = 179 ∨ 2 * (y 1).val + (y 3).val / 64 = 180 ∨ 2 * (y 1).val + (y 3).val / 64 = 181 ∨ 2 * (y 1).val + (y 3).val / 64 = 182 ∨ 2 * (y 1).val + (y 3).val / 64 = 183 ∨ 2 * (y 1).val + (y 3).val / 64 = 184 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 89 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 89 64 (by decide) (by decide) (by omega)⟩
    · exact ⟨_, List.mem_cons_of_mem _ (List.mem_cons_of_mem _ (List.mem_cons_of_mem _ (List.mem_cons_of_mem _ (List.mem_cons_self)))), mem_piece y 90 0 (by decide) (by decide) (by omega)⟩
    · exact ⟨_, List.mem_cons_of_mem _ (List.mem_cons_of_mem _ (List.mem_cons_of_mem _ (List.mem_cons_self))), mem_piece y 90 64 (by decide) (by decide) (by omega)⟩
    · exact ⟨_, List.mem_cons_of_mem _ (List.mem_cons_of_mem _ (List.mem_cons_self)), mem_piece y 91 0 (by decide) (by decide) (by omega)⟩
    · exact ⟨_, List.mem_cons_of_mem _ (List.mem_cons_self), mem_piece y 91 64 (by decide) (by decide) (by omega)⟩
    · exact ⟨_, List.mem_cons_self, mem_piece y 92 0 (by decide) (by decide) (by omega)⟩

theorem cov_191 (c : Dev nD) (M0 : Memref sig .tc .vmem S64x32768 .f32) (f0 : Bf (F := F) c M0) (y : S1x256x64x128.Idx)
    (hy : 2 * (y 1).val + (y 3).val / 64 < 191) : ∃ p ∈ packRun.sl.H1_191 c M0 f0, y ∈ p.1.set := by
  by_cases hlt : 2 * (y 1).val + (y 3).val / 64 < 185
  · obtain ⟨p, hp, hm⟩ := cov_185 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 185 ∨ 2 * (y 1).val + (y 3).val / 64 = 186 ∨ 2 * (y 1).val + (y 3).val / 64 = 187 ∨ 2 * (y 1).val + (y 3).val / 64 = 188 ∨ 2 * (y 1).val + (y 3).val / 64 = 189 ∨ 2 * (y 1).val + (y 3).val / 64 = 190 from by omega) with h | h | h | h | h | h
    · exact ⟨_, List.mem_cons_of_mem _ (List.mem_cons_of_mem _ (List.mem_cons_of_mem _ (List.mem_cons_of_mem _ (List.mem_cons_of_mem _ (List.mem_cons_self))))), mem_piece y 92 64 (by decide) (by decide) (by omega)⟩
    · exact ⟨_, List.mem_cons_of_mem _ (List.mem_cons_of_mem _ (List.mem_cons_of_mem _ (List.mem_cons_of_mem _ (List.mem_cons_self)))), mem_piece y 93 0 (by decide) (by decide) (by omega)⟩
    · exact ⟨_, List.mem_cons_of_mem _ (List.mem_cons_of_mem _ (List.mem_cons_of_mem _ (List.mem_cons_self))), mem_piece y 93 64 (by decide) (by decide) (by omega)⟩
    · exact ⟨_, List.mem_cons_of_mem _ (List.mem_cons_of_mem _ (List.mem_cons_self)), mem_piece y 94 0 (by decide) (by decide) (by omega)⟩
    · exact ⟨_, List.mem_cons_of_mem _ (List.mem_cons_self), mem_piece y 94 64 (by decide) (by decide) (by omega)⟩
    · exact ⟨_, List.mem_cons_self, mem_piece y 95 0 (by decide) (by decide) (by omega)⟩

theorem cov_198 (c : Dev nD) (M0 : Memref sig .tc .vmem S64x32768 .f32) (f0 : Bf (F := F) c M0) (y : S1x256x64x128.Idx)
    (hy : 2 * (y 1).val + (y 3).val / 64 < 198) : ∃ p ∈ packRun.sl.H1_198 c M0 f0, y ∈ p.1.set := by
  by_cases hlt : 2 * (y 1).val + (y 3).val / 64 < 191
  · obtain ⟨p, hp, hm⟩ := cov_191 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 191 ∨ 2 * (y 1).val + (y 3).val / 64 = 192 ∨ 2 * (y 1).val + (y 3).val / 64 = 193 ∨ 2 * (y 1).val + (y 3).val / 64 = 194 ∨ 2 * (y 1).val + (y 3).val / 64 = 195 ∨ 2 * (y 1).val + (y 3).val / 64 = 196 ∨ 2 * (y 1).val + (y 3).val / 64 = 197 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 95 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 96 0 (by decide) (by decide) (by omega)⟩
    · exact ⟨_, List.mem_cons_of_mem _ (List.mem_cons_of_mem _ (List.mem_cons_of_mem _ (List.mem_cons_of_mem _ (List.mem_cons_self)))), mem_piece y 96 64 (by decide) (by decide) (by omega)⟩
    · exact ⟨_, List.mem_cons_of_mem _ (List.mem_cons_of_mem _ (List.mem_cons_of_mem _ (List.mem_cons_self))), mem_piece y 97 0 (by decide) (by decide) (by omega)⟩
    · exact ⟨_, List.mem_cons_of_mem _ (List.mem_cons_of_mem _ (List.mem_cons_self)), mem_piece y 97 64 (by decide) (by decide) (by omega)⟩
    · exact ⟨_, List.mem_cons_of_mem _ (List.mem_cons_self), mem_piece y 98 0 (by decide) (by decide) (by omega)⟩
    · exact ⟨_, List.mem_cons_self, mem_piece y 98 64 (by decide) (by decide) (by omega)⟩

theorem cov_205 (c : Dev nD) (M0 : Memref sig .tc .vmem S64x32768 .f32) (f0 : Bf (F := F) c M0) (y : S1x256x64x128.Idx)
    (hy : 2 * (y 1).val + (y 3).val / 64 < 205) : ∃ p ∈ packRun.sl.H1_205 c M0 f0, y ∈ p.1.set := by
  by_cases hlt : 2 * (y 1).val + (y 3).val / 64 < 198
  · obtain ⟨p, hp, hm⟩ := cov_198 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 198 ∨ 2 * (y 1).val + (y 3).val / 64 = 199 ∨ 2 * (y 1).val + (y 3).val / 64 = 200 ∨ 2 * (y 1).val + (y 3).val / 64 = 201 ∨ 2 * (y 1).val + (y 3).val / 64 = 202 ∨ 2 * (y 1).val + (y 3).val / 64 = 203 ∨ 2 * (y 1).val + (y 3).val / 64 = 204 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 99 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 99 64 (by decide) (by decide) (by omega)⟩
    · exact ⟨_, List.mem_cons_of_mem _ (List.mem_cons_of_mem _ (List.mem_cons_of_mem _ (List.mem_cons_of_mem _ (List.mem_cons_self)))), mem_piece y 100 0 (by decide) (by decide) (by omega)⟩
    · exact ⟨_, List.mem_cons_of_mem _ (List.mem_cons_of_mem _ (List.mem_cons_of_mem _ (List.mem_cons_self))), mem_piece y 100 64 (by decide) (by decide) (by omega)⟩
    · exact ⟨_, List.mem_cons_of_mem _ (List.mem_cons_of_mem _ (List.mem_cons_self)), mem_piece y 101 0 (by decide) (by decide) (by omega)⟩
    · exact ⟨_, List.mem_cons_of_mem _ (List.mem_cons_self), mem_piece y 101 64 (by decide) (by decide) (by omega)⟩
    · exact ⟨_, List.mem_cons_self, mem_piece y 102 0 (by decide) (by decide) (by omega)⟩

theorem cov_211 (c : Dev nD) (M0 : Memref sig .tc .vmem S64x32768 .f32) (f0 : Bf (F := F) c M0) (y : S1x256x64x128.Idx)
    (hy : 2 * (y 1).val + (y 3).val / 64 < 211) : ∃ p ∈ packRun.sl.H1_211 c M0 f0, y ∈ p.1.set := by
  by_cases hlt : 2 * (y 1).val + (y 3).val / 64 < 205
  · obtain ⟨p, hp, hm⟩ := cov_205 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 205 ∨ 2 * (y 1).val + (y 3).val / 64 = 206 ∨ 2 * (y 1).val + (y 3).val / 64 = 207 ∨ 2 * (y 1).val + (y 3).val / 64 = 208 ∨ 2 * (y 1).val + (y 3).val / 64 = 209 ∨ 2 * (y 1).val + (y 3).val / 64 = 210 from by omega) with h | h | h | h | h | h
    · exact ⟨_, List.mem_cons_of_mem _ (List.mem_cons_of_mem _ (List.mem_cons_of_mem _ (List.mem_cons_of_mem _ (List.mem_cons_of_mem _ (List.mem_cons_self))))), mem_piece y 102 64 (by decide) (by decide) (by omega)⟩
    · exact ⟨_, List.mem_cons_of_mem _ (List.mem_cons_of_mem _ (List.mem_cons_of_mem _ (List.mem_cons_of_mem _ (List.mem_cons_self)))), mem_piece y 103 0 (by decide) (by decide) (by omega)⟩
    · exact ⟨_, List.mem_cons_of_mem _ (List.mem_cons_of_mem _ (List.mem_cons_of_mem _ (List.mem_cons_self))), mem_piece y 103 64 (by decide) (by decide) (by omega)⟩
    · exact ⟨_, List.mem_cons_of_mem _ (List.mem_cons_of_mem _ (List.mem_cons_self)), mem_piece y 104 0 (by decide) (by decide) (by omega)⟩
    · exact ⟨_, List.mem_cons_of_mem _ (List.mem_cons_self), mem_piece y 104 64 (by decide) (by decide) (by omega)⟩
    · exact ⟨_, List.mem_cons_self, mem_piece y 105 0 (by decide) (by decide) (by omega)⟩

theorem cov_218 (c : Dev nD) (M0 : Memref sig .tc .vmem S64x32768 .f32) (f0 : Bf (F := F) c M0) (y : S1x256x64x128.Idx)
    (hy : 2 * (y 1).val + (y 3).val / 64 < 218) : ∃ p ∈ packRun.sl.H1_218 c M0 f0, y ∈ p.1.set := by
  by_cases hlt : 2 * (y 1).val + (y 3).val / 64 < 211
  · obtain ⟨p, hp, hm⟩ := cov_211 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 211 ∨ 2 * (y 1).val + (y 3).val / 64 = 212 ∨ 2 * (y 1).val + (y 3).val / 64 = 213 ∨ 2 * (y 1).val + (y 3).val / 64 = 214 ∨ 2 * (y 1).val + (y 3).val / 64 = 215 ∨ 2 * (y 1).val + (y 3).val / 64 = 216 ∨ 2 * (y 1).val + (y 3).val / 64 = 217 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 105 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 106 0 (by decide) (by decide) (by omega)⟩
    · exact ⟨_, List.mem_cons_of_mem _ (List.mem_cons_of_mem _ (List.mem_cons_of_mem _ (List.mem_cons_of_mem _ (List.mem_cons_self)))), mem_piece y 106 64 (by decide) (by decide) (by omega)⟩
    · exact ⟨_, List.mem_cons_of_mem _ (List.mem_cons_of_mem _ (List.mem_cons_of_mem _ (List.mem_cons_self))), mem_piece y 107 0 (by decide) (by decide) (by omega)⟩
    · exact ⟨_, List.mem_cons_of_mem _ (List.mem_cons_of_mem _ (List.mem_cons_self)), mem_piece y 107 64 (by decide) (by decide) (by omega)⟩
    · exact ⟨_, List.mem_cons_of_mem _ (List.mem_cons_self), mem_piece y 108 0 (by decide) (by decide) (by omega)⟩
    · exact ⟨_, List.mem_cons_self, mem_piece y 108 64 (by decide) (by decide) (by omega)⟩

theorem cov_225 (c : Dev nD) (M0 : Memref sig .tc .vmem S64x32768 .f32) (f0 : Bf (F := F) c M0) (y : S1x256x64x128.Idx)
    (hy : 2 * (y 1).val + (y 3).val / 64 < 225) : ∃ p ∈ packRun.sl.H1_225 c M0 f0, y ∈ p.1.set := by
  by_cases hlt : 2 * (y 1).val + (y 3).val / 64 < 218
  · obtain ⟨p, hp, hm⟩ := cov_218 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 218 ∨ 2 * (y 1).val + (y 3).val / 64 = 219 ∨ 2 * (y 1).val + (y 3).val / 64 = 220 ∨ 2 * (y 1).val + (y 3).val / 64 = 221 ∨ 2 * (y 1).val + (y 3).val / 64 = 222 ∨ 2 * (y 1).val + (y 3).val / 64 = 223 ∨ 2 * (y 1).val + (y 3).val / 64 = 224 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 109 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 109 64 (by decide) (by decide) (by omega)⟩
    · exact ⟨_, List.mem_cons_of_mem _ (List.mem_cons_of_mem _ (List.mem_cons_of_mem _ (List.mem_cons_of_mem _ (List.mem_cons_self)))), mem_piece y 110 0 (by decide) (by decide) (by omega)⟩
    · exact ⟨_, List.mem_cons_of_mem _ (List.mem_cons_of_mem _ (List.mem_cons_of_mem _ (List.mem_cons_self))), mem_piece y 110 64 (by decide) (by decide) (by omega)⟩
    · exact ⟨_, List.mem_cons_of_mem _ (List.mem_cons_of_mem _ (List.mem_cons_self)), mem_piece y 111 0 (by decide) (by decide) (by omega)⟩
    · exact ⟨_, List.mem_cons_of_mem _ (List.mem_cons_self), mem_piece y 111 64 (by decide) (by decide) (by omega)⟩
    · exact ⟨_, List.mem_cons_self, mem_piece y 112 0 (by decide) (by decide) (by omega)⟩

theorem cov_231 (c : Dev nD) (M0 : Memref sig .tc .vmem S64x32768 .f32) (f0 : Bf (F := F) c M0) (y : S1x256x64x128.Idx)
    (hy : 2 * (y 1).val + (y 3).val / 64 < 231) : ∃ p ∈ packRun.sl.H1_231 c M0 f0, y ∈ p.1.set := by
  by_cases hlt : 2 * (y 1).val + (y 3).val / 64 < 225
  · obtain ⟨p, hp, hm⟩ := cov_225 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 225 ∨ 2 * (y 1).val + (y 3).val / 64 = 226 ∨ 2 * (y 1).val + (y 3).val / 64 = 227 ∨ 2 * (y 1).val + (y 3).val / 64 = 228 ∨ 2 * (y 1).val + (y 3).val / 64 = 229 ∨ 2 * (y 1).val + (y 3).val / 64 = 230 from by omega) with h | h | h | h | h | h
    · exact ⟨_, List.mem_cons_of_mem _ (List.mem_cons_of_mem _ (List.mem_cons_of_mem _ (List.mem_cons_of_mem _ (List.mem_cons_of_mem _ (List.mem_cons_self))))), mem_piece y 112 64 (by decide) (by decide) (by omega)⟩
    · exact ⟨_, List.mem_cons_of_mem _ (List.mem_cons_of_mem _ (List.mem_cons_of_mem _ (List.mem_cons_of_mem _ (List.mem_cons_self)))), mem_piece y 113 0 (by decide) (by decide) (by omega)⟩
    · exact ⟨_, List.mem_cons_of_mem _ (List.mem_cons_of_mem _ (List.mem_cons_of_mem _ (List.mem_cons_self))), mem_piece y 113 64 (by decide) (by decide) (by omega)⟩
    · exact ⟨_, List.mem_cons_of_mem _ (List.mem_cons_of_mem _ (List.mem_cons_self)), mem_piece y 114 0 (by decide) (by decide) (by omega)⟩
    · exact ⟨_, List.mem_cons_of_mem _ (List.mem_cons_self), mem_piece y 114 64 (by decide) (by decide) (by omega)⟩
    · exact ⟨_, List.mem_cons_self, mem_piece y 115 0 (by decide) (by decide) (by omega)⟩

theorem cov_238 (c : Dev nD) (M0 : Memref sig .tc .vmem S64x32768 .f32) (f0 : Bf (F := F) c M0) (y : S1x256x64x128.Idx)
    (hy : 2 * (y 1).val + (y 3).val / 64 < 238) : ∃ p ∈ packRun.sl.H1_238 c M0 f0, y ∈ p.1.set := by
  by_cases hlt : 2 * (y 1).val + (y 3).val / 64 < 231
  · obtain ⟨p, hp, hm⟩ := cov_231 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 231 ∨ 2 * (y 1).val + (y 3).val / 64 = 232 ∨ 2 * (y 1).val + (y 3).val / 64 = 233 ∨ 2 * (y 1).val + (y 3).val / 64 = 234 ∨ 2 * (y 1).val + (y 3).val / 64 = 235 ∨ 2 * (y 1).val + (y 3).val / 64 = 236 ∨ 2 * (y 1).val + (y 3).val / 64 = 237 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 115 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 116 0 (by decide) (by decide) (by omega)⟩
    · exact ⟨_, List.mem_cons_of_mem _ (List.mem_cons_of_mem _ (List.mem_cons_of_mem _ (List.mem_cons_of_mem _ (List.mem_cons_self)))), mem_piece y 116 64 (by decide) (by decide) (by omega)⟩
    · exact ⟨_, List.mem_cons_of_mem _ (List.mem_cons_of_mem _ (List.mem_cons_of_mem _ (List.mem_cons_self))), mem_piece y 117 0 (by decide) (by decide) (by omega)⟩
    · exact ⟨_, List.mem_cons_of_mem _ (List.mem_cons_of_mem _ (List.mem_cons_self)), mem_piece y 117 64 (by decide) (by decide) (by omega)⟩
    · exact ⟨_, List.mem_cons_of_mem _ (List.mem_cons_self), mem_piece y 118 0 (by decide) (by decide) (by omega)⟩
    · exact ⟨_, List.mem_cons_self, mem_piece y 118 64 (by decide) (by decide) (by omega)⟩

theorem cov_245 (c : Dev nD) (M0 : Memref sig .tc .vmem S64x32768 .f32) (f0 : Bf (F := F) c M0) (y : S1x256x64x128.Idx)
    (hy : 2 * (y 1).val + (y 3).val / 64 < 245) : ∃ p ∈ packRun.sl.H1_245 c M0 f0, y ∈ p.1.set := by
  by_cases hlt : 2 * (y 1).val + (y 3).val / 64 < 238
  · obtain ⟨p, hp, hm⟩ := cov_238 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 238 ∨ 2 * (y 1).val + (y 3).val / 64 = 239 ∨ 2 * (y 1).val + (y 3).val / 64 = 240 ∨ 2 * (y 1).val + (y 3).val / 64 = 241 ∨ 2 * (y 1).val + (y 3).val / 64 = 242 ∨ 2 * (y 1).val + (y 3).val / 64 = 243 ∨ 2 * (y 1).val + (y 3).val / 64 = 244 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 119 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 119 64 (by decide) (by decide) (by omega)⟩
    · exact ⟨_, List.mem_cons_of_mem _ (List.mem_cons_of_mem _ (List.mem_cons_of_mem _ (List.mem_cons_of_mem _ (List.mem_cons_self)))), mem_piece y 120 0 (by decide) (by decide) (by omega)⟩
    · exact ⟨_, List.mem_cons_of_mem _ (List.mem_cons_of_mem _ (List.mem_cons_of_mem _ (List.mem_cons_self))), mem_piece y 120 64 (by decide) (by decide) (by omega)⟩
    · exact ⟨_, List.mem_cons_of_mem _ (List.mem_cons_of_mem _ (List.mem_cons_self)), mem_piece y 121 0 (by decide) (by decide) (by omega)⟩
    · exact ⟨_, List.mem_cons_of_mem _ (List.mem_cons_self), mem_piece y 121 64 (by decide) (by decide) (by omega)⟩
    · exact ⟨_, List.mem_cons_self, mem_piece y 122 0 (by decide) (by decide) (by omega)⟩

theorem cov_251 (c : Dev nD) (M0 : Memref sig .tc .vmem S64x32768 .f32) (f0 : Bf (F := F) c M0) (y : S1x256x64x128.Idx)
    (hy : 2 * (y 1).val + (y 3).val / 64 < 251) : ∃ p ∈ packRun.sl.H1_251 c M0 f0, y ∈ p.1.set := by
  by_cases hlt : 2 * (y 1).val + (y 3).val / 64 < 245
  · obtain ⟨p, hp, hm⟩ := cov_245 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 245 ∨ 2 * (y 1).val + (y 3).val / 64 = 246 ∨ 2 * (y 1).val + (y 3).val / 64 = 247 ∨ 2 * (y 1).val + (y 3).val / 64 = 248 ∨ 2 * (y 1).val + (y 3).val / 64 = 249 ∨ 2 * (y 1).val + (y 3).val / 64 = 250 from by omega) with h | h | h | h | h | h
    · exact ⟨_, List.mem_cons_of_mem _ (List.mem_cons_of_mem _ (List.mem_cons_of_mem _ (List.mem_cons_of_mem _ (List.mem_cons_of_mem _ (List.mem_cons_self))))), mem_piece y 122 64 (by decide) (by decide) (by omega)⟩
    · exact ⟨_, List.mem_cons_of_mem _ (List.mem_cons_of_mem _ (List.mem_cons_of_mem _ (List.mem_cons_of_mem _ (List.mem_cons_self)))), mem_piece y 123 0 (by decide) (by decide) (by omega)⟩
    · exact ⟨_, List.mem_cons_of_mem _ (List.mem_cons_of_mem _ (List.mem_cons_of_mem _ (List.mem_cons_self))), mem_piece y 123 64 (by decide) (by decide) (by omega)⟩
    · exact ⟨_, List.mem_cons_of_mem _ (List.mem_cons_of_mem _ (List.mem_cons_self)), mem_piece y 124 0 (by decide) (by decide) (by omega)⟩
    · exact ⟨_, List.mem_cons_of_mem _ (List.mem_cons_self), mem_piece y 124 64 (by decide) (by decide) (by omega)⟩
    · exact ⟨_, List.mem_cons_self, mem_piece y 125 0 (by decide) (by decide) (by omega)⟩

theorem cov_258 (c : Dev nD) (M0 : Memref sig .tc .vmem S64x32768 .f32) (f0 : Bf (F := F) c M0) (y : S1x256x64x128.Idx)
    (hy : 2 * (y 1).val + (y 3).val / 64 < 258) : ∃ p ∈ packRun.sl.H1_258 c M0 f0, y ∈ p.1.set := by
  by_cases hlt : 2 * (y 1).val + (y 3).val / 64 < 251
  · obtain ⟨p, hp, hm⟩ := cov_251 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 251 ∨ 2 * (y 1).val + (y 3).val / 64 = 252 ∨ 2 * (y 1).val + (y 3).val / 64 = 253 ∨ 2 * (y 1).val + (y 3).val / 64 = 254 ∨ 2 * (y 1).val + (y 3).val / 64 = 255 ∨ 2 * (y 1).val + (y 3).val / 64 = 256 ∨ 2 * (y 1).val + (y 3).val / 64 = 257 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 125 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 126 0 (by decide) (by decide) (by omega)⟩
    · exact ⟨_, List.mem_cons_of_mem _ (List.mem_cons_of_mem _ (List.mem_cons_of_mem _ (List.mem_cons_of_mem _ (List.mem_cons_self)))), mem_piece y 126 64 (by decide) (by decide) (by omega)⟩
    · exact ⟨_, List.mem_cons_of_mem _ (List.mem_cons_of_mem _ (List.mem_cons_of_mem _ (List.mem_cons_self))), mem_piece y 127 0 (by decide) (by decide) (by omega)⟩
    · exact ⟨_, List.mem_cons_of_mem _ (List.mem_cons_of_mem _ (List.mem_cons_self)), mem_piece y 127 64 (by decide) (by decide) (by omega)⟩
    · exact ⟨_, List.mem_cons_of_mem _ (List.mem_cons_self), mem_piece y 128 0 (by decide) (by decide) (by omega)⟩
    · exact ⟨_, List.mem_cons_self, mem_piece y 128 64 (by decide) (by decide) (by omega)⟩

theorem cov_265 (c : Dev nD) (M0 : Memref sig .tc .vmem S64x32768 .f32) (f0 : Bf (F := F) c M0) (y : S1x256x64x128.Idx)
    (hy : 2 * (y 1).val + (y 3).val / 64 < 265) : ∃ p ∈ packRun.sl.H1_265 c M0 f0, y ∈ p.1.set := by
  by_cases hlt : 2 * (y 1).val + (y 3).val / 64 < 258
  · obtain ⟨p, hp, hm⟩ := cov_258 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 258 ∨ 2 * (y 1).val + (y 3).val / 64 = 259 ∨ 2 * (y 1).val + (y 3).val / 64 = 260 ∨ 2 * (y 1).val + (y 3).val / 64 = 261 ∨ 2 * (y 1).val + (y 3).val / 64 = 262 ∨ 2 * (y 1).val + (y 3).val / 64 = 263 ∨ 2 * (y 1).val + (y 3).val / 64 = 264 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 129 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 129 64 (by decide) (by decide) (by omega)⟩
    · exact ⟨_, List.mem_cons_of_mem _ (List.mem_cons_of_mem _ (List.mem_cons_of_mem _ (List.mem_cons_of_mem _ (List.mem_cons_self)))), mem_piece y 130 0 (by decide) (by decide) (by omega)⟩
    · exact ⟨_, List.mem_cons_of_mem _ (List.mem_cons_of_mem _ (List.mem_cons_of_mem _ (List.mem_cons_self))), mem_piece y 130 64 (by decide) (by decide) (by omega)⟩
    · exact ⟨_, List.mem_cons_of_mem _ (List.mem_cons_of_mem _ (List.mem_cons_self)), mem_piece y 131 0 (by decide) (by decide) (by omega)⟩
    · exact ⟨_, List.mem_cons_of_mem _ (List.mem_cons_self), mem_piece y 131 64 (by decide) (by decide) (by omega)⟩
    · exact ⟨_, List.mem_cons_self, mem_piece y 132 0 (by decide) (by decide) (by omega)⟩

theorem cov_271 (c : Dev nD) (M0 : Memref sig .tc .vmem S64x32768 .f32) (f0 : Bf (F := F) c M0) (y : S1x256x64x128.Idx)
    (hy : 2 * (y 1).val + (y 3).val / 64 < 271) : ∃ p ∈ packRun.sl.H1_271 c M0 f0, y ∈ p.1.set := by
  by_cases hlt : 2 * (y 1).val + (y 3).val / 64 < 265
  · obtain ⟨p, hp, hm⟩ := cov_265 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 265 ∨ 2 * (y 1).val + (y 3).val / 64 = 266 ∨ 2 * (y 1).val + (y 3).val / 64 = 267 ∨ 2 * (y 1).val + (y 3).val / 64 = 268 ∨ 2 * (y 1).val + (y 3).val / 64 = 269 ∨ 2 * (y 1).val + (y 3).val / 64 = 270 from by omega) with h | h | h | h | h | h
    · exact ⟨_, List.mem_cons_of_mem _ (List.mem_cons_of_mem _ (List.mem_cons_of_mem _ (List.mem_cons_of_mem _ (List.mem_cons_of_mem _ (List.mem_cons_self))))), mem_piece y 132 64 (by decide) (by decide) (by omega)⟩
    · exact ⟨_, List.mem_cons_of_mem _ (List.mem_cons_of_mem _ (List.mem_cons_of_mem _ (List.mem_cons_of_mem _ (List.mem_cons_self)))), mem_piece y 133 0 (by decide) (by decide) (by omega)⟩
    · exact ⟨_, List.mem_cons_of_mem _ (List.mem_cons_of_mem _ (List.mem_cons_of_mem _ (List.mem_cons_self))), mem_piece y 133 64 (by decide) (by decide) (by omega)⟩
    · exact ⟨_, List.mem_cons_of_mem _ (List.mem_cons_of_mem _ (List.mem_cons_self)), mem_piece y 134 0 (by decide) (by decide) (by omega)⟩
    · exact ⟨_, List.mem_cons_of_mem _ (List.mem_cons_self), mem_piece y 134 64 (by decide) (by decide) (by omega)⟩
    · exact ⟨_, List.mem_cons_self, mem_piece y 135 0 (by decide) (by decide) (by omega)⟩

theorem cov_278 (c : Dev nD) (M0 : Memref sig .tc .vmem S64x32768 .f32) (f0 : Bf (F := F) c M0) (y : S1x256x64x128.Idx)
    (hy : 2 * (y 1).val + (y 3).val / 64 < 278) : ∃ p ∈ packRun.sl.H1_278 c M0 f0, y ∈ p.1.set := by
  by_cases hlt : 2 * (y 1).val + (y 3).val / 64 < 271
  · obtain ⟨p, hp, hm⟩ := cov_271 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 271 ∨ 2 * (y 1).val + (y 3).val / 64 = 272 ∨ 2 * (y 1).val + (y 3).val / 64 = 273 ∨ 2 * (y 1).val + (y 3).val / 64 = 274 ∨ 2 * (y 1).val + (y 3).val / 64 = 275 ∨ 2 * (y 1).val + (y 3).val / 64 = 276 ∨ 2 * (y 1).val + (y 3).val / 64 = 277 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 135 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 136 0 (by decide) (by decide) (by omega)⟩
    · exact ⟨_, List.mem_cons_of_mem _ (List.mem_cons_of_mem _ (List.mem_cons_of_mem _ (List.mem_cons_of_mem _ (List.mem_cons_self)))), mem_piece y 136 64 (by decide) (by decide) (by omega)⟩
    · exact ⟨_, List.mem_cons_of_mem _ (List.mem_cons_of_mem _ (List.mem_cons_of_mem _ (List.mem_cons_self))), mem_piece y 137 0 (by decide) (by decide) (by omega)⟩
    · exact ⟨_, List.mem_cons_of_mem _ (List.mem_cons_of_mem _ (List.mem_cons_self)), mem_piece y 137 64 (by decide) (by decide) (by omega)⟩
    · exact ⟨_, List.mem_cons_of_mem _ (List.mem_cons_self), mem_piece y 138 0 (by decide) (by decide) (by omega)⟩
    · exact ⟨_, List.mem_cons_self, mem_piece y 138 64 (by decide) (by decide) (by omega)⟩

theorem cov_285 (c : Dev nD) (M0 : Memref sig .tc .vmem S64x32768 .f32) (f0 : Bf (F := F) c M0) (y : S1x256x64x128.Idx)
    (hy : 2 * (y 1).val + (y 3).val / 64 < 285) : ∃ p ∈ packRun.sl.H1_285 c M0 f0, y ∈ p.1.set := by
  by_cases hlt : 2 * (y 1).val + (y 3).val / 64 < 278
  · obtain ⟨p, hp, hm⟩ := cov_278 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 278 ∨ 2 * (y 1).val + (y 3).val / 64 = 279 ∨ 2 * (y 1).val + (y 3).val / 64 = 280 ∨ 2 * (y 1).val + (y 3).val / 64 = 281 ∨ 2 * (y 1).val + (y 3).val / 64 = 282 ∨ 2 * (y 1).val + (y 3).val / 64 = 283 ∨ 2 * (y 1).val + (y 3).val / 64 = 284 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 139 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 139 64 (by decide) (by decide) (by omega)⟩
    · exact ⟨_, List.mem_cons_of_mem _ (List.mem_cons_of_mem _ (List.mem_cons_of_mem _ (List.mem_cons_of_mem _ (List.mem_cons_self)))), mem_piece y 140 0 (by decide) (by decide) (by omega)⟩
    · exact ⟨_, List.mem_cons_of_mem _ (List.mem_cons_of_mem _ (List.mem_cons_of_mem _ (List.mem_cons_self))), mem_piece y 140 64 (by decide) (by decide) (by omega)⟩
    · exact ⟨_, List.mem_cons_of_mem _ (List.mem_cons_of_mem _ (List.mem_cons_self)), mem_piece y 141 0 (by decide) (by decide) (by omega)⟩
    · exact ⟨_, List.mem_cons_of_mem _ (List.mem_cons_self), mem_piece y 141 64 (by decide) (by decide) (by omega)⟩
    · exact ⟨_, List.mem_cons_self, mem_piece y 142 0 (by decide) (by decide) (by omega)⟩

theorem cov_291 (c : Dev nD) (M0 : Memref sig .tc .vmem S64x32768 .f32) (f0 : Bf (F := F) c M0) (y : S1x256x64x128.Idx)
    (hy : 2 * (y 1).val + (y 3).val / 64 < 291) : ∃ p ∈ packRun.sl.H1_291 c M0 f0, y ∈ p.1.set := by
  by_cases hlt : 2 * (y 1).val + (y 3).val / 64 < 285
  · obtain ⟨p, hp, hm⟩ := cov_285 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 285 ∨ 2 * (y 1).val + (y 3).val / 64 = 286 ∨ 2 * (y 1).val + (y 3).val / 64 = 287 ∨ 2 * (y 1).val + (y 3).val / 64 = 288 ∨ 2 * (y 1).val + (y 3).val / 64 = 289 ∨ 2 * (y 1).val + (y 3).val / 64 = 290 from by omega) with h | h | h | h | h | h
    · exact ⟨_, List.mem_cons_of_mem _ (List.mem_cons_of_mem _ (List.mem_cons_of_mem _ (List.mem_cons_of_mem _ (List.mem_cons_of_mem _ (List.mem_cons_self))))), mem_piece y 142 64 (by decide) (by decide) (by omega)⟩
    · exact ⟨_, List.mem_cons_of_mem _ (List.mem_cons_of_mem _ (List.mem_cons_of_mem _ (List.mem_cons_of_mem _ (List.mem_cons_self)))), mem_piece y 143 0 (by decide) (by decide) (by omega)⟩
    · exact ⟨_, List.mem_cons_of_mem _ (List.mem_cons_of_mem _ (List.mem_cons_of_mem _ (List.mem_cons_self))), mem_piece y 143 64 (by decide) (by decide) (by omega)⟩
    · exact ⟨_, List.mem_cons_of_mem _ (List.mem_cons_of_mem _ (List.mem_cons_self)), mem_piece y 144 0 (by decide) (by decide) (by omega)⟩
    · exact ⟨_, List.mem_cons_of_mem _ (List.mem_cons_self), mem_piece y 144 64 (by decide) (by decide) (by omega)⟩
    · exact ⟨_, List.mem_cons_self, mem_piece y 145 0 (by decide) (by decide) (by omega)⟩

theorem cov_298 (c : Dev nD) (M0 : Memref sig .tc .vmem S64x32768 .f32) (f0 : Bf (F := F) c M0) (y : S1x256x64x128.Idx)
    (hy : 2 * (y 1).val + (y 3).val / 64 < 298) : ∃ p ∈ packRun.sl.H1_298 c M0 f0, y ∈ p.1.set := by
  by_cases hlt : 2 * (y 1).val + (y 3).val / 64 < 291
  · obtain ⟨p, hp, hm⟩ := cov_291 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 291 ∨ 2 * (y 1).val + (y 3).val / 64 = 292 ∨ 2 * (y 1).val + (y 3).val / 64 = 293 ∨ 2 * (y 1).val + (y 3).val / 64 = 294 ∨ 2 * (y 1).val + (y 3).val / 64 = 295 ∨ 2 * (y 1).val + (y 3).val / 64 = 296 ∨ 2 * (y 1).val + (y 3).val / 64 = 297 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 145 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 146 0 (by decide) (by decide) (by omega)⟩
    · exact ⟨_, List.mem_cons_of_mem _ (List.mem_cons_of_mem _ (List.mem_cons_of_mem _ (List.mem_cons_of_mem _ (List.mem_cons_self)))), mem_piece y 146 64 (by decide) (by decide) (by omega)⟩
    · exact ⟨_, List.mem_cons_of_mem _ (List.mem_cons_of_mem _ (List.mem_cons_of_mem _ (List.mem_cons_self))), mem_piece y 147 0 (by decide) (by decide) (by omega)⟩
    · exact ⟨_, List.mem_cons_of_mem _ (List.mem_cons_of_mem _ (List.mem_cons_self)), mem_piece y 147 64 (by decide) (by decide) (by omega)⟩
    · exact ⟨_, List.mem_cons_of_mem _ (List.mem_cons_self), mem_piece y 148 0 (by decide) (by decide) (by omega)⟩
    · exact ⟨_, List.mem_cons_self, mem_piece y 148 64 (by decide) (by decide) (by omega)⟩

theorem cov_305 (c : Dev nD) (M0 : Memref sig .tc .vmem S64x32768 .f32) (f0 : Bf (F := F) c M0) (y : S1x256x64x128.Idx)
    (hy : 2 * (y 1).val + (y 3).val / 64 < 305) : ∃ p ∈ packRun.sl.H1_305 c M0 f0, y ∈ p.1.set := by
  by_cases hlt : 2 * (y 1).val + (y 3).val / 64 < 298
  · obtain ⟨p, hp, hm⟩ := cov_298 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 298 ∨ 2 * (y 1).val + (y 3).val / 64 = 299 ∨ 2 * (y 1).val + (y 3).val / 64 = 300 ∨ 2 * (y 1).val + (y 3).val / 64 = 301 ∨ 2 * (y 1).val + (y 3).val / 64 = 302 ∨ 2 * (y 1).val + (y 3).val / 64 = 303 ∨ 2 * (y 1).val + (y 3).val / 64 = 304 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 149 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 149 64 (by decide) (by decide) (by omega)⟩
    · exact ⟨_, List.mem_cons_of_mem _ (List.mem_cons_of_mem _ (List.mem_cons_of_mem _ (List.mem_cons_of_mem _ (List.mem_cons_self)))), mem_piece y 150 0 (by decide) (by decide) (by omega)⟩
    · exact ⟨_, List.mem_cons_of_mem _ (List.mem_cons_of_mem _ (List.mem_cons_of_mem _ (List.mem_cons_self))), mem_piece y 150 64 (by decide) (by decide) (by omega)⟩
    · exact ⟨_, List.mem_cons_of_mem _ (List.mem_cons_of_mem _ (List.mem_cons_self)), mem_piece y 151 0 (by decide) (by decide) (by omega)⟩
    · exact ⟨_, List.mem_cons_of_mem _ (List.mem_cons_self), mem_piece y 151 64 (by decide) (by decide) (by omega)⟩
    · exact ⟨_, List.mem_cons_self, mem_piece y 152 0 (by decide) (by decide) (by omega)⟩

theorem cov_311 (c : Dev nD) (M0 : Memref sig .tc .vmem S64x32768 .f32) (f0 : Bf (F := F) c M0) (y : S1x256x64x128.Idx)
    (hy : 2 * (y 1).val + (y 3).val / 64 < 311) : ∃ p ∈ packRun.sl.H1_311 c M0 f0, y ∈ p.1.set := by
  by_cases hlt : 2 * (y 1).val + (y 3).val / 64 < 305
  · obtain ⟨p, hp, hm⟩ := cov_305 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 305 ∨ 2 * (y 1).val + (y 3).val / 64 = 306 ∨ 2 * (y 1).val + (y 3).val / 64 = 307 ∨ 2 * (y 1).val + (y 3).val / 64 = 308 ∨ 2 * (y 1).val + (y 3).val / 64 = 309 ∨ 2 * (y 1).val + (y 3).val / 64 = 310 from by omega) with h | h | h | h | h | h
    · exact ⟨_, List.mem_cons_of_mem _ (List.mem_cons_of_mem _ (List.mem_cons_of_mem _ (List.mem_cons_of_mem _ (List.mem_cons_of_mem _ (List.mem_cons_self))))), mem_piece y 152 64 (by decide) (by decide) (by omega)⟩
    · exact ⟨_, List.mem_cons_of_mem _ (List.mem_cons_of_mem _ (List.mem_cons_of_mem _ (List.mem_cons_of_mem _ (List.mem_cons_self)))), mem_piece y 153 0 (by decide) (by decide) (by omega)⟩
    · exact ⟨_, List.mem_cons_of_mem _ (List.mem_cons_of_mem _ (List.mem_cons_of_mem _ (List.mem_cons_self))), mem_piece y 153 64 (by decide) (by decide) (by omega)⟩
    · exact ⟨_, List.mem_cons_of_mem _ (List.mem_cons_of_mem _ (List.mem_cons_self)), mem_piece y 154 0 (by decide) (by decide) (by omega)⟩
    · exact ⟨_, List.mem_cons_of_mem _ (List.mem_cons_self), mem_piece y 154 64 (by decide) (by decide) (by omega)⟩
    · exact ⟨_, List.mem_cons_self, mem_piece y 155 0 (by decide) (by decide) (by omega)⟩

theorem cov_318 (c : Dev nD) (M0 : Memref sig .tc .vmem S64x32768 .f32) (f0 : Bf (F := F) c M0) (y : S1x256x64x128.Idx)
    (hy : 2 * (y 1).val + (y 3).val / 64 < 318) : ∃ p ∈ packRun.sl.H1_318 c M0 f0, y ∈ p.1.set := by
  by_cases hlt : 2 * (y 1).val + (y 3).val / 64 < 311
  · obtain ⟨p, hp, hm⟩ := cov_311 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 311 ∨ 2 * (y 1).val + (y 3).val / 64 = 312 ∨ 2 * (y 1).val + (y 3).val / 64 = 313 ∨ 2 * (y 1).val + (y 3).val / 64 = 314 ∨ 2 * (y 1).val + (y 3).val / 64 = 315 ∨ 2 * (y 1).val + (y 3).val / 64 = 316 ∨ 2 * (y 1).val + (y 3).val / 64 = 317 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 155 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 156 0 (by decide) (by decide) (by omega)⟩
    · exact ⟨_, List.mem_cons_of_mem _ (List.mem_cons_of_mem _ (List.mem_cons_of_mem _ (List.mem_cons_of_mem _ (List.mem_cons_self)))), mem_piece y 156 64 (by decide) (by decide) (by omega)⟩
    · exact ⟨_, List.mem_cons_of_mem _ (List.mem_cons_of_mem _ (List.mem_cons_of_mem _ (List.mem_cons_self))), mem_piece y 157 0 (by decide) (by decide) (by omega)⟩
    · exact ⟨_, List.mem_cons_of_mem _ (List.mem_cons_of_mem _ (List.mem_cons_self)), mem_piece y 157 64 (by decide) (by decide) (by omega)⟩
    · exact ⟨_, List.mem_cons_of_mem _ (List.mem_cons_self), mem_piece y 158 0 (by decide) (by decide) (by omega)⟩
    · exact ⟨_, List.mem_cons_self, mem_piece y 158 64 (by decide) (by decide) (by omega)⟩

theorem cov_325 (c : Dev nD) (M0 : Memref sig .tc .vmem S64x32768 .f32) (f0 : Bf (F := F) c M0) (y : S1x256x64x128.Idx)
    (hy : 2 * (y 1).val + (y 3).val / 64 < 325) : ∃ p ∈ packRun.sl.H1_325 c M0 f0, y ∈ p.1.set := by
  by_cases hlt : 2 * (y 1).val + (y 3).val / 64 < 318
  · obtain ⟨p, hp, hm⟩ := cov_318 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 318 ∨ 2 * (y 1).val + (y 3).val / 64 = 319 ∨ 2 * (y 1).val + (y 3).val / 64 = 320 ∨ 2 * (y 1).val + (y 3).val / 64 = 321 ∨ 2 * (y 1).val + (y 3).val / 64 = 322 ∨ 2 * (y 1).val + (y 3).val / 64 = 323 ∨ 2 * (y 1).val + (y 3).val / 64 = 324 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 159 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 159 64 (by decide) (by decide) (by omega)⟩
    · exact ⟨_, List.mem_cons_of_mem _ (List.mem_cons_of_mem _ (List.mem_cons_of_mem _ (List.mem_cons_of_mem _ (List.mem_cons_self)))), mem_piece y 160 0 (by decide) (by decide) (by omega)⟩
    · exact ⟨_, List.mem_cons_of_mem _ (List.mem_cons_of_mem _ (List.mem_cons_of_mem _ (List.mem_cons_self))), mem_piece y 160 64 (by decide) (by decide) (by omega)⟩
    · exact ⟨_, List.mem_cons_of_mem _ (List.mem_cons_of_mem _ (List.mem_cons_self)), mem_piece y 161 0 (by decide) (by decide) (by omega)⟩
    · exact ⟨_, List.mem_cons_of_mem _ (List.mem_cons_self), mem_piece y 161 64 (by decide) (by decide) (by omega)⟩
    · exact ⟨_, List.mem_cons_self, mem_piece y 162 0 (by decide) (by decide) (by omega)⟩

theorem cov_331 (c : Dev nD) (M0 : Memref sig .tc .vmem S64x32768 .f32) (f0 : Bf (F := F) c M0) (y : S1x256x64x128.Idx)
    (hy : 2 * (y 1).val + (y 3).val / 64 < 331) : ∃ p ∈ packRun.sl.H1_331 c M0 f0, y ∈ p.1.set := by
  by_cases hlt : 2 * (y 1).val + (y 3).val / 64 < 325
  · obtain ⟨p, hp, hm⟩ := cov_325 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 325 ∨ 2 * (y 1).val + (y 3).val / 64 = 326 ∨ 2 * (y 1).val + (y 3).val / 64 = 327 ∨ 2 * (y 1).val + (y 3).val / 64 = 328 ∨ 2 * (y 1).val + (y 3).val / 64 = 329 ∨ 2 * (y 1).val + (y 3).val / 64 = 330 from by omega) with h | h | h | h | h | h
    · exact ⟨_, List.mem_cons_of_mem _ (List.mem_cons_of_mem _ (List.mem_cons_of_mem _ (List.mem_cons_of_mem _ (List.mem_cons_of_mem _ (List.mem_cons_self))))), mem_piece y 162 64 (by decide) (by decide) (by omega)⟩
    · exact ⟨_, List.mem_cons_of_mem _ (List.mem_cons_of_mem _ (List.mem_cons_of_mem _ (List.mem_cons_of_mem _ (List.mem_cons_self)))), mem_piece y 163 0 (by decide) (by decide) (by omega)⟩
    · exact ⟨_, List.mem_cons_of_mem _ (List.mem_cons_of_mem _ (List.mem_cons_of_mem _ (List.mem_cons_self))), mem_piece y 163 64 (by decide) (by decide) (by omega)⟩
    · exact ⟨_, List.mem_cons_of_mem _ (List.mem_cons_of_mem _ (List.mem_cons_self)), mem_piece y 164 0 (by decide) (by decide) (by omega)⟩
    · exact ⟨_, List.mem_cons_of_mem _ (List.mem_cons_self), mem_piece y 164 64 (by decide) (by decide) (by omega)⟩
    · exact ⟨_, List.mem_cons_self, mem_piece y 165 0 (by decide) (by decide) (by omega)⟩

theorem cov_338 (c : Dev nD) (M0 : Memref sig .tc .vmem S64x32768 .f32) (f0 : Bf (F := F) c M0) (y : S1x256x64x128.Idx)
    (hy : 2 * (y 1).val + (y 3).val / 64 < 338) : ∃ p ∈ packRun.sl.H1_338 c M0 f0, y ∈ p.1.set := by
  by_cases hlt : 2 * (y 1).val + (y 3).val / 64 < 331
  · obtain ⟨p, hp, hm⟩ := cov_331 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 331 ∨ 2 * (y 1).val + (y 3).val / 64 = 332 ∨ 2 * (y 1).val + (y 3).val / 64 = 333 ∨ 2 * (y 1).val + (y 3).val / 64 = 334 ∨ 2 * (y 1).val + (y 3).val / 64 = 335 ∨ 2 * (y 1).val + (y 3).val / 64 = 336 ∨ 2 * (y 1).val + (y 3).val / 64 = 337 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 165 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 166 0 (by decide) (by decide) (by omega)⟩
    · exact ⟨_, List.mem_cons_of_mem _ (List.mem_cons_of_mem _ (List.mem_cons_of_mem _ (List.mem_cons_of_mem _ (List.mem_cons_self)))), mem_piece y 166 64 (by decide) (by decide) (by omega)⟩
    · exact ⟨_, List.mem_cons_of_mem _ (List.mem_cons_of_mem _ (List.mem_cons_of_mem _ (List.mem_cons_self))), mem_piece y 167 0 (by decide) (by decide) (by omega)⟩
    · exact ⟨_, List.mem_cons_of_mem _ (List.mem_cons_of_mem _ (List.mem_cons_self)), mem_piece y 167 64 (by decide) (by decide) (by omega)⟩
    · exact ⟨_, List.mem_cons_of_mem _ (List.mem_cons_self), mem_piece y 168 0 (by decide) (by decide) (by omega)⟩
    · exact ⟨_, List.mem_cons_self, mem_piece y 168 64 (by decide) (by decide) (by omega)⟩

theorem cov_345 (c : Dev nD) (M0 : Memref sig .tc .vmem S64x32768 .f32) (f0 : Bf (F := F) c M0) (y : S1x256x64x128.Idx)
    (hy : 2 * (y 1).val + (y 3).val / 64 < 345) : ∃ p ∈ packRun.sl.H1_345 c M0 f0, y ∈ p.1.set := by
  by_cases hlt : 2 * (y 1).val + (y 3).val / 64 < 338
  · obtain ⟨p, hp, hm⟩ := cov_338 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 338 ∨ 2 * (y 1).val + (y 3).val / 64 = 339 ∨ 2 * (y 1).val + (y 3).val / 64 = 340 ∨ 2 * (y 1).val + (y 3).val / 64 = 341 ∨ 2 * (y 1).val + (y 3).val / 64 = 342 ∨ 2 * (y 1).val + (y 3).val / 64 = 343 ∨ 2 * (y 1).val + (y 3).val / 64 = 344 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 169 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 169 64 (by decide) (by decide) (by omega)⟩
    · exact ⟨_, List.mem_cons_of_mem _ (List.mem_cons_of_mem _ (List.mem_cons_of_mem _ (List.mem_cons_of_mem _ (List.mem_cons_self)))), mem_piece y 170 0 (by decide) (by decide) (by omega)⟩
    · exact ⟨_, List.mem_cons_of_mem _ (List.mem_cons_of_mem _ (List.mem_cons_of_mem _ (List.mem_cons_self))), mem_piece y 170 64 (by decide) (by decide) (by omega)⟩
    · exact ⟨_, List.mem_cons_of_mem _ (List.mem_cons_of_mem _ (List.mem_cons_self)), mem_piece y 171 0 (by decide) (by decide) (by omega)⟩
    · exact ⟨_, List.mem_cons_of_mem _ (List.mem_cons_self), mem_piece y 171 64 (by decide) (by decide) (by omega)⟩
    · exact ⟨_, List.mem_cons_self, mem_piece y 172 0 (by decide) (by decide) (by omega)⟩

theorem cov_351 (c : Dev nD) (M0 : Memref sig .tc .vmem S64x32768 .f32) (f0 : Bf (F := F) c M0) (y : S1x256x64x128.Idx)
    (hy : 2 * (y 1).val + (y 3).val / 64 < 351) : ∃ p ∈ packRun.sl.H1_351 c M0 f0, y ∈ p.1.set := by
  by_cases hlt : 2 * (y 1).val + (y 3).val / 64 < 345
  · obtain ⟨p, hp, hm⟩ := cov_345 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 345 ∨ 2 * (y 1).val + (y 3).val / 64 = 346 ∨ 2 * (y 1).val + (y 3).val / 64 = 347 ∨ 2 * (y 1).val + (y 3).val / 64 = 348 ∨ 2 * (y 1).val + (y 3).val / 64 = 349 ∨ 2 * (y 1).val + (y 3).val / 64 = 350 from by omega) with h | h | h | h | h | h
    · exact ⟨_, List.mem_cons_of_mem _ (List.mem_cons_of_mem _ (List.mem_cons_of_mem _ (List.mem_cons_of_mem _ (List.mem_cons_of_mem _ (List.mem_cons_self))))), mem_piece y 172 64 (by decide) (by decide) (by omega)⟩
    · exact ⟨_, List.mem_cons_of_mem _ (List.mem_cons_of_mem _ (List.mem_cons_of_mem _ (List.mem_cons_of_mem _ (List.mem_cons_self)))), mem_piece y 173 0 (by decide) (by decide) (by omega)⟩
    · exact ⟨_, List.mem_cons_of_mem _ (List.mem_cons_of_mem _ (List.mem_cons_of_mem _ (List.mem_cons_self))), mem_piece y 173 64 (by decide) (by decide) (by omega)⟩
    · exact ⟨_, List.mem_cons_of_mem _ (List.mem_cons_of_mem _ (List.mem_cons_self)), mem_piece y 174 0 (by decide) (by decide) (by omega)⟩
    · exact ⟨_, List.mem_cons_of_mem _ (List.mem_cons_self), mem_piece y 174 64 (by decide) (by decide) (by omega)⟩
    · exact ⟨_, List.mem_cons_self, mem_piece y 175 0 (by decide) (by decide) (by omega)⟩

theorem cov_358 (c : Dev nD) (M0 : Memref sig .tc .vmem S64x32768 .f32) (f0 : Bf (F := F) c M0) (y : S1x256x64x128.Idx)
    (hy : 2 * (y 1).val + (y 3).val / 64 < 358) : ∃ p ∈ packRun.sl.H1_358 c M0 f0, y ∈ p.1.set := by
  by_cases hlt : 2 * (y 1).val + (y 3).val / 64 < 351
  · obtain ⟨p, hp, hm⟩ := cov_351 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 351 ∨ 2 * (y 1).val + (y 3).val / 64 = 352 ∨ 2 * (y 1).val + (y 3).val / 64 = 353 ∨ 2 * (y 1).val + (y 3).val / 64 = 354 ∨ 2 * (y 1).val + (y 3).val / 64 = 355 ∨ 2 * (y 1).val + (y 3).val / 64 = 356 ∨ 2 * (y 1).val + (y 3).val / 64 = 357 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 175 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 176 0 (by decide) (by decide) (by omega)⟩
    · exact ⟨_, List.mem_cons_of_mem _ (List.mem_cons_of_mem _ (List.mem_cons_of_mem _ (List.mem_cons_of_mem _ (List.mem_cons_self)))), mem_piece y 176 64 (by decide) (by decide) (by omega)⟩
    · exact ⟨_, List.mem_cons_of_mem _ (List.mem_cons_of_mem _ (List.mem_cons_of_mem _ (List.mem_cons_self))), mem_piece y 177 0 (by decide) (by decide) (by omega)⟩
    · exact ⟨_, List.mem_cons_of_mem _ (List.mem_cons_of_mem _ (List.mem_cons_self)), mem_piece y 177 64 (by decide) (by decide) (by omega)⟩
    · exact ⟨_, List.mem_cons_of_mem _ (List.mem_cons_self), mem_piece y 178 0 (by decide) (by decide) (by omega)⟩
    · exact ⟨_, List.mem_cons_self, mem_piece y 178 64 (by decide) (by decide) (by omega)⟩

theorem cov_365 (c : Dev nD) (M0 : Memref sig .tc .vmem S64x32768 .f32) (f0 : Bf (F := F) c M0) (y : S1x256x64x128.Idx)
    (hy : 2 * (y 1).val + (y 3).val / 64 < 365) : ∃ p ∈ packRun.sl.H1_365 c M0 f0, y ∈ p.1.set := by
  by_cases hlt : 2 * (y 1).val + (y 3).val / 64 < 358
  · obtain ⟨p, hp, hm⟩ := cov_358 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 358 ∨ 2 * (y 1).val + (y 3).val / 64 = 359 ∨ 2 * (y 1).val + (y 3).val / 64 = 360 ∨ 2 * (y 1).val + (y 3).val / 64 = 361 ∨ 2 * (y 1).val + (y 3).val / 64 = 362 ∨ 2 * (y 1).val + (y 3).val / 64 = 363 ∨ 2 * (y 1).val + (y 3).val / 64 = 364 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 179 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 179 64 (by decide) (by decide) (by omega)⟩
    · exact ⟨_, List.mem_cons_of_mem _ (List.mem_cons_of_mem _ (List.mem_cons_of_mem _ (List.mem_cons_of_mem _ (List.mem_cons_self)))), mem_piece y 180 0 (by decide) (by decide) (by omega)⟩
    · exact ⟨_, List.mem_cons_of_mem _ (List.mem_cons_of_mem _ (List.mem_cons_of_mem _ (List.mem_cons_self))), mem_piece y 180 64 (by decide) (by decide) (by omega)⟩
    · exact ⟨_, List.mem_cons_of_mem _ (List.mem_cons_of_mem _ (List.mem_cons_self)), mem_piece y 181 0 (by decide) (by decide) (by omega)⟩
    · exact ⟨_, List.mem_cons_of_mem _ (List.mem_cons_self), mem_piece y 181 64 (by decide) (by decide) (by omega)⟩
    · exact ⟨_, List.mem_cons_self, mem_piece y 182 0 (by decide) (by decide) (by omega)⟩

theorem cov_371 (c : Dev nD) (M0 : Memref sig .tc .vmem S64x32768 .f32) (f0 : Bf (F := F) c M0) (y : S1x256x64x128.Idx)
    (hy : 2 * (y 1).val + (y 3).val / 64 < 371) : ∃ p ∈ packRun.sl.H1_371 c M0 f0, y ∈ p.1.set := by
  by_cases hlt : 2 * (y 1).val + (y 3).val / 64 < 365
  · obtain ⟨p, hp, hm⟩ := cov_365 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 365 ∨ 2 * (y 1).val + (y 3).val / 64 = 366 ∨ 2 * (y 1).val + (y 3).val / 64 = 367 ∨ 2 * (y 1).val + (y 3).val / 64 = 368 ∨ 2 * (y 1).val + (y 3).val / 64 = 369 ∨ 2 * (y 1).val + (y 3).val / 64 = 370 from by omega) with h | h | h | h | h | h
    · exact ⟨_, List.mem_cons_of_mem _ (List.mem_cons_of_mem _ (List.mem_cons_of_mem _ (List.mem_cons_of_mem _ (List.mem_cons_of_mem _ (List.mem_cons_self))))), mem_piece y 182 64 (by decide) (by decide) (by omega)⟩
    · exact ⟨_, List.mem_cons_of_mem _ (List.mem_cons_of_mem _ (List.mem_cons_of_mem _ (List.mem_cons_of_mem _ (List.mem_cons_self)))), mem_piece y 183 0 (by decide) (by decide) (by omega)⟩
    · exact ⟨_, List.mem_cons_of_mem _ (List.mem_cons_of_mem _ (List.mem_cons_of_mem _ (List.mem_cons_self))), mem_piece y 183 64 (by decide) (by decide) (by omega)⟩
    · exact ⟨_, List.mem_cons_of_mem _ (List.mem_cons_of_mem _ (List.mem_cons_self)), mem_piece y 184 0 (by decide) (by decide) (by omega)⟩
    · exact ⟨_, List.mem_cons_of_mem _ (List.mem_cons_self), mem_piece y 184 64 (by decide) (by decide) (by omega)⟩
    · exact ⟨_, List.mem_cons_self, mem_piece y 185 0 (by decide) (by decide) (by omega)⟩

theorem cov_378 (c : Dev nD) (M0 : Memref sig .tc .vmem S64x32768 .f32) (f0 : Bf (F := F) c M0) (y : S1x256x64x128.Idx)
    (hy : 2 * (y 1).val + (y 3).val / 64 < 378) : ∃ p ∈ packRun.sl.H1_378 c M0 f0, y ∈ p.1.set := by
  by_cases hlt : 2 * (y 1).val + (y 3).val / 64 < 371
  · obtain ⟨p, hp, hm⟩ := cov_371 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 371 ∨ 2 * (y 1).val + (y 3).val / 64 = 372 ∨ 2 * (y 1).val + (y 3).val / 64 = 373 ∨ 2 * (y 1).val + (y 3).val / 64 = 374 ∨ 2 * (y 1).val + (y 3).val / 64 = 375 ∨ 2 * (y 1).val + (y 3).val / 64 = 376 ∨ 2 * (y 1).val + (y 3).val / 64 = 377 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 185 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 186 0 (by decide) (by decide) (by omega)⟩
    · exact ⟨_, List.mem_cons_of_mem _ (List.mem_cons_of_mem _ (List.mem_cons_of_mem _ (List.mem_cons_of_mem _ (List.mem_cons_self)))), mem_piece y 186 64 (by decide) (by decide) (by omega)⟩
    · exact ⟨_, List.mem_cons_of_mem _ (List.mem_cons_of_mem _ (List.mem_cons_of_mem _ (List.mem_cons_self))), mem_piece y 187 0 (by decide) (by decide) (by omega)⟩
    · exact ⟨_, List.mem_cons_of_mem _ (List.mem_cons_of_mem _ (List.mem_cons_self)), mem_piece y 187 64 (by decide) (by decide) (by omega)⟩
    · exact ⟨_, List.mem_cons_of_mem _ (List.mem_cons_self), mem_piece y 188 0 (by decide) (by decide) (by omega)⟩
    · exact ⟨_, List.mem_cons_self, mem_piece y 188 64 (by decide) (by decide) (by omega)⟩

theorem cov_385 (c : Dev nD) (M0 : Memref sig .tc .vmem S64x32768 .f32) (f0 : Bf (F := F) c M0) (y : S1x256x64x128.Idx)
    (hy : 2 * (y 1).val + (y 3).val / 64 < 385) : ∃ p ∈ packRun.sl.H1_385 c M0 f0, y ∈ p.1.set := by
  by_cases hlt : 2 * (y 1).val + (y 3).val / 64 < 378
  · obtain ⟨p, hp, hm⟩ := cov_378 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 378 ∨ 2 * (y 1).val + (y 3).val / 64 = 379 ∨ 2 * (y 1).val + (y 3).val / 64 = 380 ∨ 2 * (y 1).val + (y 3).val / 64 = 381 ∨ 2 * (y 1).val + (y 3).val / 64 = 382 ∨ 2 * (y 1).val + (y 3).val / 64 = 383 ∨ 2 * (y 1).val + (y 3).val / 64 = 384 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 189 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 189 64 (by decide) (by decide) (by omega)⟩
    · exact ⟨_, List.mem_cons_of_mem _ (List.mem_cons_of_mem _ (List.mem_cons_of_mem _ (List.mem_cons_of_mem _ (List.mem_cons_self)))), mem_piece y 190 0 (by decide) (by decide) (by omega)⟩
    · exact ⟨_, List.mem_cons_of_mem _ (List.mem_cons_of_mem _ (List.mem_cons_of_mem _ (List.mem_cons_self))), mem_piece y 190 64 (by decide) (by decide) (by omega)⟩
    · exact ⟨_, List.mem_cons_of_mem _ (List.mem_cons_of_mem _ (List.mem_cons_self)), mem_piece y 191 0 (by decide) (by decide) (by omega)⟩
    · exact ⟨_, List.mem_cons_of_mem _ (List.mem_cons_self), mem_piece y 191 64 (by decide) (by decide) (by omega)⟩
    · exact ⟨_, List.mem_cons_self, mem_piece y 192 0 (by decide) (by decide) (by omega)⟩

theorem cov_391 (c : Dev nD) (M0 : Memref sig .tc .vmem S64x32768 .f32) (f0 : Bf (F := F) c M0) (y : S1x256x64x128.Idx)
    (hy : 2 * (y 1).val + (y 3).val / 64 < 391) : ∃ p ∈ packRun.sl.H1_391 c M0 f0, y ∈ p.1.set := by
  by_cases hlt : 2 * (y 1).val + (y 3).val / 64 < 385
  · obtain ⟨p, hp, hm⟩ := cov_385 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 385 ∨ 2 * (y 1).val + (y 3).val / 64 = 386 ∨ 2 * (y 1).val + (y 3).val / 64 = 387 ∨ 2 * (y 1).val + (y 3).val / 64 = 388 ∨ 2 * (y 1).val + (y 3).val / 64 = 389 ∨ 2 * (y 1).val + (y 3).val / 64 = 390 from by omega) with h | h | h | h | h | h
    · exact ⟨_, List.mem_cons_of_mem _ (List.mem_cons_of_mem _ (List.mem_cons_of_mem _ (List.mem_cons_of_mem _ (List.mem_cons_of_mem _ (List.mem_cons_self))))), mem_piece y 192 64 (by decide) (by decide) (by omega)⟩
    · exact ⟨_, List.mem_cons_of_mem _ (List.mem_cons_of_mem _ (List.mem_cons_of_mem _ (List.mem_cons_of_mem _ (List.mem_cons_self)))), mem_piece y 193 0 (by decide) (by decide) (by omega)⟩
    · exact ⟨_, List.mem_cons_of_mem _ (List.mem_cons_of_mem _ (List.mem_cons_of_mem _ (List.mem_cons_self))), mem_piece y 193 64 (by decide) (by decide) (by omega)⟩
    · exact ⟨_, List.mem_cons_of_mem _ (List.mem_cons_of_mem _ (List.mem_cons_self)), mem_piece y 194 0 (by decide) (by decide) (by omega)⟩
    · exact ⟨_, List.mem_cons_of_mem _ (List.mem_cons_self), mem_piece y 194 64 (by decide) (by decide) (by omega)⟩
    · exact ⟨_, List.mem_cons_self, mem_piece y 195 0 (by decide) (by decide) (by omega)⟩

theorem cov_398 (c : Dev nD) (M0 : Memref sig .tc .vmem S64x32768 .f32) (f0 : Bf (F := F) c M0) (y : S1x256x64x128.Idx)
    (hy : 2 * (y 1).val + (y 3).val / 64 < 398) : ∃ p ∈ packRun.sl.H1_398 c M0 f0, y ∈ p.1.set := by
  by_cases hlt : 2 * (y 1).val + (y 3).val / 64 < 391
  · obtain ⟨p, hp, hm⟩ := cov_391 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 391 ∨ 2 * (y 1).val + (y 3).val / 64 = 392 ∨ 2 * (y 1).val + (y 3).val / 64 = 393 ∨ 2 * (y 1).val + (y 3).val / 64 = 394 ∨ 2 * (y 1).val + (y 3).val / 64 = 395 ∨ 2 * (y 1).val + (y 3).val / 64 = 396 ∨ 2 * (y 1).val + (y 3).val / 64 = 397 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 195 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 196 0 (by decide) (by decide) (by omega)⟩
    · exact ⟨_, List.mem_cons_of_mem _ (List.mem_cons_of_mem _ (List.mem_cons_of_mem _ (List.mem_cons_of_mem _ (List.mem_cons_self)))), mem_piece y 196 64 (by decide) (by decide) (by omega)⟩
    · exact ⟨_, List.mem_cons_of_mem _ (List.mem_cons_of_mem _ (List.mem_cons_of_mem _ (List.mem_cons_self))), mem_piece y 197 0 (by decide) (by decide) (by omega)⟩
    · exact ⟨_, List.mem_cons_of_mem _ (List.mem_cons_of_mem _ (List.mem_cons_self)), mem_piece y 197 64 (by decide) (by decide) (by omega)⟩
    · exact ⟨_, List.mem_cons_of_mem _ (List.mem_cons_self), mem_piece y 198 0 (by decide) (by decide) (by omega)⟩
    · exact ⟨_, List.mem_cons_self, mem_piece y 198 64 (by decide) (by decide) (by omega)⟩

theorem cov_405 (c : Dev nD) (M0 : Memref sig .tc .vmem S64x32768 .f32) (f0 : Bf (F := F) c M0) (y : S1x256x64x128.Idx)
    (hy : 2 * (y 1).val + (y 3).val / 64 < 405) : ∃ p ∈ packRun.sl.H1_405 c M0 f0, y ∈ p.1.set := by
  by_cases hlt : 2 * (y 1).val + (y 3).val / 64 < 398
  · obtain ⟨p, hp, hm⟩ := cov_398 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 398 ∨ 2 * (y 1).val + (y 3).val / 64 = 399 ∨ 2 * (y 1).val + (y 3).val / 64 = 400 ∨ 2 * (y 1).val + (y 3).val / 64 = 401 ∨ 2 * (y 1).val + (y 3).val / 64 = 402 ∨ 2 * (y 1).val + (y 3).val / 64 = 403 ∨ 2 * (y 1).val + (y 3).val / 64 = 404 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 199 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 199 64 (by decide) (by decide) (by omega)⟩
    · exact ⟨_, List.mem_cons_of_mem _ (List.mem_cons_of_mem _ (List.mem_cons_of_mem _ (List.mem_cons_of_mem _ (List.mem_cons_self)))), mem_piece y 200 0 (by decide) (by decide) (by omega)⟩
    · exact ⟨_, List.mem_cons_of_mem _ (List.mem_cons_of_mem _ (List.mem_cons_of_mem _ (List.mem_cons_self))), mem_piece y 200 64 (by decide) (by decide) (by omega)⟩
    · exact ⟨_, List.mem_cons_of_mem _ (List.mem_cons_of_mem _ (List.mem_cons_self)), mem_piece y 201 0 (by decide) (by decide) (by omega)⟩
    · exact ⟨_, List.mem_cons_of_mem _ (List.mem_cons_self), mem_piece y 201 64 (by decide) (by decide) (by omega)⟩
    · exact ⟨_, List.mem_cons_self, mem_piece y 202 0 (by decide) (by decide) (by omega)⟩

theorem cov_411 (c : Dev nD) (M0 : Memref sig .tc .vmem S64x32768 .f32) (f0 : Bf (F := F) c M0) (y : S1x256x64x128.Idx)
    (hy : 2 * (y 1).val + (y 3).val / 64 < 411) : ∃ p ∈ packRun.sl.H1_411 c M0 f0, y ∈ p.1.set := by
  by_cases hlt : 2 * (y 1).val + (y 3).val / 64 < 405
  · obtain ⟨p, hp, hm⟩ := cov_405 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 405 ∨ 2 * (y 1).val + (y 3).val / 64 = 406 ∨ 2 * (y 1).val + (y 3).val / 64 = 407 ∨ 2 * (y 1).val + (y 3).val / 64 = 408 ∨ 2 * (y 1).val + (y 3).val / 64 = 409 ∨ 2 * (y 1).val + (y 3).val / 64 = 410 from by omega) with h | h | h | h | h | h
    · exact ⟨_, List.mem_cons_of_mem _ (List.mem_cons_of_mem _ (List.mem_cons_of_mem _ (List.mem_cons_of_mem _ (List.mem_cons_of_mem _ (List.mem_cons_self))))), mem_piece y 202 64 (by decide) (by decide) (by omega)⟩
    · exact ⟨_, List.mem_cons_of_mem _ (List.mem_cons_of_mem _ (List.mem_cons_of_mem _ (List.mem_cons_of_mem _ (List.mem_cons_self)))), mem_piece y 203 0 (by decide) (by decide) (by omega)⟩
    · exact ⟨_, List.mem_cons_of_mem _ (List.mem_cons_of_mem _ (List.mem_cons_of_mem _ (List.mem_cons_self))), mem_piece y 203 64 (by decide) (by decide) (by omega)⟩
    · exact ⟨_, List.mem_cons_of_mem _ (List.mem_cons_of_mem _ (List.mem_cons_self)), mem_piece y 204 0 (by decide) (by decide) (by omega)⟩
    · exact ⟨_, List.mem_cons_of_mem _ (List.mem_cons_self), mem_piece y 204 64 (by decide) (by decide) (by omega)⟩
    · exact ⟨_, List.mem_cons_self, mem_piece y 205 0 (by decide) (by decide) (by omega)⟩

theorem cov_418 (c : Dev nD) (M0 : Memref sig .tc .vmem S64x32768 .f32) (f0 : Bf (F := F) c M0) (y : S1x256x64x128.Idx)
    (hy : 2 * (y 1).val + (y 3).val / 64 < 418) : ∃ p ∈ packRun.sl.H1_418 c M0 f0, y ∈ p.1.set := by
  by_cases hlt : 2 * (y 1).val + (y 3).val / 64 < 411
  · obtain ⟨p, hp, hm⟩ := cov_411 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 411 ∨ 2 * (y 1).val + (y 3).val / 64 = 412 ∨ 2 * (y 1).val + (y 3).val / 64 = 413 ∨ 2 * (y 1).val + (y 3).val / 64 = 414 ∨ 2 * (y 1).val + (y 3).val / 64 = 415 ∨ 2 * (y 1).val + (y 3).val / 64 = 416 ∨ 2 * (y 1).val + (y 3).val / 64 = 417 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 205 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 206 0 (by decide) (by decide) (by omega)⟩
    · exact ⟨_, List.mem_cons_of_mem _ (List.mem_cons_of_mem _ (List.mem_cons_of_mem _ (List.mem_cons_of_mem _ (List.mem_cons_self)))), mem_piece y 206 64 (by decide) (by decide) (by omega)⟩
    · exact ⟨_, List.mem_cons_of_mem _ (List.mem_cons_of_mem _ (List.mem_cons_of_mem _ (List.mem_cons_self))), mem_piece y 207 0 (by decide) (by decide) (by omega)⟩
    · exact ⟨_, List.mem_cons_of_mem _ (List.mem_cons_of_mem _ (List.mem_cons_self)), mem_piece y 207 64 (by decide) (by decide) (by omega)⟩
    · exact ⟨_, List.mem_cons_of_mem _ (List.mem_cons_self), mem_piece y 208 0 (by decide) (by decide) (by omega)⟩
    · exact ⟨_, List.mem_cons_self, mem_piece y 208 64 (by decide) (by decide) (by omega)⟩

theorem cov_425 (c : Dev nD) (M0 : Memref sig .tc .vmem S64x32768 .f32) (f0 : Bf (F := F) c M0) (y : S1x256x64x128.Idx)
    (hy : 2 * (y 1).val + (y 3).val / 64 < 425) : ∃ p ∈ packRun.sl.H1_425 c M0 f0, y ∈ p.1.set := by
  by_cases hlt : 2 * (y 1).val + (y 3).val / 64 < 418
  · obtain ⟨p, hp, hm⟩ := cov_418 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 418 ∨ 2 * (y 1).val + (y 3).val / 64 = 419 ∨ 2 * (y 1).val + (y 3).val / 64 = 420 ∨ 2 * (y 1).val + (y 3).val / 64 = 421 ∨ 2 * (y 1).val + (y 3).val / 64 = 422 ∨ 2 * (y 1).val + (y 3).val / 64 = 423 ∨ 2 * (y 1).val + (y 3).val / 64 = 424 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 209 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 209 64 (by decide) (by decide) (by omega)⟩
    · exact ⟨_, List.mem_cons_of_mem _ (List.mem_cons_of_mem _ (List.mem_cons_of_mem _ (List.mem_cons_of_mem _ (List.mem_cons_self)))), mem_piece y 210 0 (by decide) (by decide) (by omega)⟩
    · exact ⟨_, List.mem_cons_of_mem _ (List.mem_cons_of_mem _ (List.mem_cons_of_mem _ (List.mem_cons_self))), mem_piece y 210 64 (by decide) (by decide) (by omega)⟩
    · exact ⟨_, List.mem_cons_of_mem _ (List.mem_cons_of_mem _ (List.mem_cons_self)), mem_piece y 211 0 (by decide) (by decide) (by omega)⟩
    · exact ⟨_, List.mem_cons_of_mem _ (List.mem_cons_self), mem_piece y 211 64 (by decide) (by decide) (by omega)⟩
    · exact ⟨_, List.mem_cons_self, mem_piece y 212 0 (by decide) (by decide) (by omega)⟩

theorem cov_431 (c : Dev nD) (M0 : Memref sig .tc .vmem S64x32768 .f32) (f0 : Bf (F := F) c M0) (y : S1x256x64x128.Idx)
    (hy : 2 * (y 1).val + (y 3).val / 64 < 431) : ∃ p ∈ packRun.sl.H1_431 c M0 f0, y ∈ p.1.set := by
  by_cases hlt : 2 * (y 1).val + (y 3).val / 64 < 425
  · obtain ⟨p, hp, hm⟩ := cov_425 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 425 ∨ 2 * (y 1).val + (y 3).val / 64 = 426 ∨ 2 * (y 1).val + (y 3).val / 64 = 427 ∨ 2 * (y 1).val + (y 3).val / 64 = 428 ∨ 2 * (y 1).val + (y 3).val / 64 = 429 ∨ 2 * (y 1).val + (y 3).val / 64 = 430 from by omega) with h | h | h | h | h | h
    · exact ⟨_, List.mem_cons_of_mem _ (List.mem_cons_of_mem _ (List.mem_cons_of_mem _ (List.mem_cons_of_mem _ (List.mem_cons_of_mem _ (List.mem_cons_self))))), mem_piece y 212 64 (by decide) (by decide) (by omega)⟩
    · exact ⟨_, List.mem_cons_of_mem _ (List.mem_cons_of_mem _ (List.mem_cons_of_mem _ (List.mem_cons_of_mem _ (List.mem_cons_self)))), mem_piece y 213 0 (by decide) (by decide) (by omega)⟩
    · exact ⟨_, List.mem_cons_of_mem _ (List.mem_cons_of_mem _ (List.mem_cons_of_mem _ (List.mem_cons_self))), mem_piece y 213 64 (by decide) (by decide) (by omega)⟩
    · exact ⟨_, List.mem_cons_of_mem _ (List.mem_cons_of_mem _ (List.mem_cons_self)), mem_piece y 214 0 (by decide) (by decide) (by omega)⟩
    · exact ⟨_, List.mem_cons_of_mem _ (List.mem_cons_self), mem_piece y 214 64 (by decide) (by decide) (by omega)⟩
    · exact ⟨_, List.mem_cons_self, mem_piece y 215 0 (by decide) (by decide) (by omega)⟩

theorem cov_438 (c : Dev nD) (M0 : Memref sig .tc .vmem S64x32768 .f32) (f0 : Bf (F := F) c M0) (y : S1x256x64x128.Idx)
    (hy : 2 * (y 1).val + (y 3).val / 64 < 438) : ∃ p ∈ packRun.sl.H1_438 c M0 f0, y ∈ p.1.set := by
  by_cases hlt : 2 * (y 1).val + (y 3).val / 64 < 431
  · obtain ⟨p, hp, hm⟩ := cov_431 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 431 ∨ 2 * (y 1).val + (y 3).val / 64 = 432 ∨ 2 * (y 1).val + (y 3).val / 64 = 433 ∨ 2 * (y 1).val + (y 3).val / 64 = 434 ∨ 2 * (y 1).val + (y 3).val / 64 = 435 ∨ 2 * (y 1).val + (y 3).val / 64 = 436 ∨ 2 * (y 1).val + (y 3).val / 64 = 437 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 215 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 216 0 (by decide) (by decide) (by omega)⟩
    · exact ⟨_, List.mem_cons_of_mem _ (List.mem_cons_of_mem _ (List.mem_cons_of_mem _ (List.mem_cons_of_mem _ (List.mem_cons_self)))), mem_piece y 216 64 (by decide) (by decide) (by omega)⟩
    · exact ⟨_, List.mem_cons_of_mem _ (List.mem_cons_of_mem _ (List.mem_cons_of_mem _ (List.mem_cons_self))), mem_piece y 217 0 (by decide) (by decide) (by omega)⟩
    · exact ⟨_, List.mem_cons_of_mem _ (List.mem_cons_of_mem _ (List.mem_cons_self)), mem_piece y 217 64 (by decide) (by decide) (by omega)⟩
    · exact ⟨_, List.mem_cons_of_mem _ (List.mem_cons_self), mem_piece y 218 0 (by decide) (by decide) (by omega)⟩
    · exact ⟨_, List.mem_cons_self, mem_piece y 218 64 (by decide) (by decide) (by omega)⟩

theorem cov_445 (c : Dev nD) (M0 : Memref sig .tc .vmem S64x32768 .f32) (f0 : Bf (F := F) c M0) (y : S1x256x64x128.Idx)
    (hy : 2 * (y 1).val + (y 3).val / 64 < 445) : ∃ p ∈ packRun.sl.H1_445 c M0 f0, y ∈ p.1.set := by
  by_cases hlt : 2 * (y 1).val + (y 3).val / 64 < 438
  · obtain ⟨p, hp, hm⟩ := cov_438 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 438 ∨ 2 * (y 1).val + (y 3).val / 64 = 439 ∨ 2 * (y 1).val + (y 3).val / 64 = 440 ∨ 2 * (y 1).val + (y 3).val / 64 = 441 ∨ 2 * (y 1).val + (y 3).val / 64 = 442 ∨ 2 * (y 1).val + (y 3).val / 64 = 443 ∨ 2 * (y 1).val + (y 3).val / 64 = 444 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 219 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 219 64 (by decide) (by decide) (by omega)⟩
    · exact ⟨_, List.mem_cons_of_mem _ (List.mem_cons_of_mem _ (List.mem_cons_of_mem _ (List.mem_cons_of_mem _ (List.mem_cons_self)))), mem_piece y 220 0 (by decide) (by decide) (by omega)⟩
    · exact ⟨_, List.mem_cons_of_mem _ (List.mem_cons_of_mem _ (List.mem_cons_of_mem _ (List.mem_cons_self))), mem_piece y 220 64 (by decide) (by decide) (by omega)⟩
    · exact ⟨_, List.mem_cons_of_mem _ (List.mem_cons_of_mem _ (List.mem_cons_self)), mem_piece y 221 0 (by decide) (by decide) (by omega)⟩
    · exact ⟨_, List.mem_cons_of_mem _ (List.mem_cons_self), mem_piece y 221 64 (by decide) (by decide) (by omega)⟩
    · exact ⟨_, List.mem_cons_self, mem_piece y 222 0 (by decide) (by decide) (by omega)⟩

theorem cov_451 (c : Dev nD) (M0 : Memref sig .tc .vmem S64x32768 .f32) (f0 : Bf (F := F) c M0) (y : S1x256x64x128.Idx)
    (hy : 2 * (y 1).val + (y 3).val / 64 < 451) : ∃ p ∈ packRun.sl.H1_451 c M0 f0, y ∈ p.1.set := by
  by_cases hlt : 2 * (y 1).val + (y 3).val / 64 < 445
  · obtain ⟨p, hp, hm⟩ := cov_445 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 445 ∨ 2 * (y 1).val + (y 3).val / 64 = 446 ∨ 2 * (y 1).val + (y 3).val / 64 = 447 ∨ 2 * (y 1).val + (y 3).val / 64 = 448 ∨ 2 * (y 1).val + (y 3).val / 64 = 449 ∨ 2 * (y 1).val + (y 3).val / 64 = 450 from by omega) with h | h | h | h | h | h
    · exact ⟨_, List.mem_cons_of_mem _ (List.mem_cons_of_mem _ (List.mem_cons_of_mem _ (List.mem_cons_of_mem _ (List.mem_cons_of_mem _ (List.mem_cons_self))))), mem_piece y 222 64 (by decide) (by decide) (by omega)⟩
    · exact ⟨_, List.mem_cons_of_mem _ (List.mem_cons_of_mem _ (List.mem_cons_of_mem _ (List.mem_cons_of_mem _ (List.mem_cons_self)))), mem_piece y 223 0 (by decide) (by decide) (by omega)⟩
    · exact ⟨_, List.mem_cons_of_mem _ (List.mem_cons_of_mem _ (List.mem_cons_of_mem _ (List.mem_cons_self))), mem_piece y 223 64 (by decide) (by decide) (by omega)⟩
    · exact ⟨_, List.mem_cons_of_mem _ (List.mem_cons_of_mem _ (List.mem_cons_self)), mem_piece y 224 0 (by decide) (by decide) (by omega)⟩
    · exact ⟨_, List.mem_cons_of_mem _ (List.mem_cons_self), mem_piece y 224 64 (by decide) (by decide) (by omega)⟩
    · exact ⟨_, List.mem_cons_self, mem_piece y 225 0 (by decide) (by decide) (by omega)⟩

theorem cov_458 (c : Dev nD) (M0 : Memref sig .tc .vmem S64x32768 .f32) (f0 : Bf (F := F) c M0) (y : S1x256x64x128.Idx)
    (hy : 2 * (y 1).val + (y 3).val / 64 < 458) : ∃ p ∈ packRun.sl.H1_458 c M0 f0, y ∈ p.1.set := by
  by_cases hlt : 2 * (y 1).val + (y 3).val / 64 < 451
  · obtain ⟨p, hp, hm⟩ := cov_451 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 451 ∨ 2 * (y 1).val + (y 3).val / 64 = 452 ∨ 2 * (y 1).val + (y 3).val / 64 = 453 ∨ 2 * (y 1).val + (y 3).val / 64 = 454 ∨ 2 * (y 1).val + (y 3).val / 64 = 455 ∨ 2 * (y 1).val + (y 3).val / 64 = 456 ∨ 2 * (y 1).val + (y 3).val / 64 = 457 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 225 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 226 0 (by decide) (by decide) (by omega)⟩
    · exact ⟨_, List.mem_cons_of_mem _ (List.mem_cons_of_mem _ (List.mem_cons_of_mem _ (List.mem_cons_of_mem _ (List.mem_cons_self)))), mem_piece y 226 64 (by decide) (by decide) (by omega)⟩
    · exact ⟨_, List.mem_cons_of_mem _ (List.mem_cons_of_mem _ (List.mem_cons_of_mem _ (List.mem_cons_self))), mem_piece y 227 0 (by decide) (by decide) (by omega)⟩
    · exact ⟨_, List.mem_cons_of_mem _ (List.mem_cons_of_mem _ (List.mem_cons_self)), mem_piece y 227 64 (by decide) (by decide) (by omega)⟩
    · exact ⟨_, List.mem_cons_of_mem _ (List.mem_cons_self), mem_piece y 228 0 (by decide) (by decide) (by omega)⟩
    · exact ⟨_, List.mem_cons_self, mem_piece y 228 64 (by decide) (by decide) (by omega)⟩

theorem cov_465 (c : Dev nD) (M0 : Memref sig .tc .vmem S64x32768 .f32) (f0 : Bf (F := F) c M0) (y : S1x256x64x128.Idx)
    (hy : 2 * (y 1).val + (y 3).val / 64 < 465) : ∃ p ∈ packRun.sl.H1_465 c M0 f0, y ∈ p.1.set := by
  by_cases hlt : 2 * (y 1).val + (y 3).val / 64 < 458
  · obtain ⟨p, hp, hm⟩ := cov_458 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 458 ∨ 2 * (y 1).val + (y 3).val / 64 = 459 ∨ 2 * (y 1).val + (y 3).val / 64 = 460 ∨ 2 * (y 1).val + (y 3).val / 64 = 461 ∨ 2 * (y 1).val + (y 3).val / 64 = 462 ∨ 2 * (y 1).val + (y 3).val / 64 = 463 ∨ 2 * (y 1).val + (y 3).val / 64 = 464 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 229 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 229 64 (by decide) (by decide) (by omega)⟩
    · exact ⟨_, List.mem_cons_of_mem _ (List.mem_cons_of_mem _ (List.mem_cons_of_mem _ (List.mem_cons_of_mem _ (List.mem_cons_self)))), mem_piece y 230 0 (by decide) (by decide) (by omega)⟩
    · exact ⟨_, List.mem_cons_of_mem _ (List.mem_cons_of_mem _ (List.mem_cons_of_mem _ (List.mem_cons_self))), mem_piece y 230 64 (by decide) (by decide) (by omega)⟩
    · exact ⟨_, List.mem_cons_of_mem _ (List.mem_cons_of_mem _ (List.mem_cons_self)), mem_piece y 231 0 (by decide) (by decide) (by omega)⟩
    · exact ⟨_, List.mem_cons_of_mem _ (List.mem_cons_self), mem_piece y 231 64 (by decide) (by decide) (by omega)⟩
    · exact ⟨_, List.mem_cons_self, mem_piece y 232 0 (by decide) (by decide) (by omega)⟩

theorem cov_471 (c : Dev nD) (M0 : Memref sig .tc .vmem S64x32768 .f32) (f0 : Bf (F := F) c M0) (y : S1x256x64x128.Idx)
    (hy : 2 * (y 1).val + (y 3).val / 64 < 471) : ∃ p ∈ packRun.sl.H1_471 c M0 f0, y ∈ p.1.set := by
  by_cases hlt : 2 * (y 1).val + (y 3).val / 64 < 465
  · obtain ⟨p, hp, hm⟩ := cov_465 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 465 ∨ 2 * (y 1).val + (y 3).val / 64 = 466 ∨ 2 * (y 1).val + (y 3).val / 64 = 467 ∨ 2 * (y 1).val + (y 3).val / 64 = 468 ∨ 2 * (y 1).val + (y 3).val / 64 = 469 ∨ 2 * (y 1).val + (y 3).val / 64 = 470 from by omega) with h | h | h | h | h | h
    · exact ⟨_, List.mem_cons_of_mem _ (List.mem_cons_of_mem _ (List.mem_cons_of_mem _ (List.mem_cons_of_mem _ (List.mem_cons_of_mem _ (List.mem_cons_self))))), mem_piece y 232 64 (by decide) (by decide) (by omega)⟩
    · exact ⟨_, List.mem_cons_of_mem _ (List.mem_cons_of_mem _ (List.mem_cons_of_mem _ (List.mem_cons_of_mem _ (List.mem_cons_self)))), mem_piece y 233 0 (by decide) (by decide) (by omega)⟩
    · exact ⟨_, List.mem_cons_of_mem _ (List.mem_cons_of_mem _ (List.mem_cons_of_mem _ (List.mem_cons_self))), mem_piece y 233 64 (by decide) (by decide) (by omega)⟩
    · exact ⟨_, List.mem_cons_of_mem _ (List.mem_cons_of_mem _ (List.mem_cons_self)), mem_piece y 234 0 (by decide) (by decide) (by omega)⟩
    · exact ⟨_, List.mem_cons_of_mem _ (List.mem_cons_self), mem_piece y 234 64 (by decide) (by decide) (by omega)⟩
    · exact ⟨_, List.mem_cons_self, mem_piece y 235 0 (by decide) (by decide) (by omega)⟩

theorem cov_478 (c : Dev nD) (M0 : Memref sig .tc .vmem S64x32768 .f32) (f0 : Bf (F := F) c M0) (y : S1x256x64x128.Idx)
    (hy : 2 * (y 1).val + (y 3).val / 64 < 478) : ∃ p ∈ packRun.sl.H1_478 c M0 f0, y ∈ p.1.set := by
  by_cases hlt : 2 * (y 1).val + (y 3).val / 64 < 471
  · obtain ⟨p, hp, hm⟩ := cov_471 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 471 ∨ 2 * (y 1).val + (y 3).val / 64 = 472 ∨ 2 * (y 1).val + (y 3).val / 64 = 473 ∨ 2 * (y 1).val + (y 3).val / 64 = 474 ∨ 2 * (y 1).val + (y 3).val / 64 = 475 ∨ 2 * (y 1).val + (y 3).val / 64 = 476 ∨ 2 * (y 1).val + (y 3).val / 64 = 477 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 235 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 236 0 (by decide) (by decide) (by omega)⟩
    · exact ⟨_, List.mem_cons_of_mem _ (List.mem_cons_of_mem _ (List.mem_cons_of_mem _ (List.mem_cons_of_mem _ (List.mem_cons_self)))), mem_piece y 236 64 (by decide) (by decide) (by omega)⟩
    · exact ⟨_, List.mem_cons_of_mem _ (List.mem_cons_of_mem _ (List.mem_cons_of_mem _ (List.mem_cons_self))), mem_piece y 237 0 (by decide) (by decide) (by omega)⟩
    · exact ⟨_, List.mem_cons_of_mem _ (List.mem_cons_of_mem _ (List.mem_cons_self)), mem_piece y 237 64 (by decide) (by decide) (by omega)⟩
    · exact ⟨_, List.mem_cons_of_mem _ (List.mem_cons_self), mem_piece y 238 0 (by decide) (by decide) (by omega)⟩
    · exact ⟨_, List.mem_cons_self, mem_piece y 238 64 (by decide) (by decide) (by omega)⟩

theorem cov_485 (c : Dev nD) (M0 : Memref sig .tc .vmem S64x32768 .f32) (f0 : Bf (F := F) c M0) (y : S1x256x64x128.Idx)
    (hy : 2 * (y 1).val + (y 3).val / 64 < 485) : ∃ p ∈ packRun.sl.H1_485 c M0 f0, y ∈ p.1.set := by
  by_cases hlt : 2 * (y 1).val + (y 3).val / 64 < 478
  · obtain ⟨p, hp, hm⟩ := cov_478 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 478 ∨ 2 * (y 1).val + (y 3).val / 64 = 479 ∨ 2 * (y 1).val + (y 3).val / 64 = 480 ∨ 2 * (y 1).val + (y 3).val / 64 = 481 ∨ 2 * (y 1).val + (y 3).val / 64 = 482 ∨ 2 * (y 1).val + (y 3).val / 64 = 483 ∨ 2 * (y 1).val + (y 3).val / 64 = 484 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 239 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 239 64 (by decide) (by decide) (by omega)⟩
    · exact ⟨_, List.mem_cons_of_mem _ (List.mem_cons_of_mem _ (List.mem_cons_of_mem _ (List.mem_cons_of_mem _ (List.mem_cons_self)))), mem_piece y 240 0 (by decide) (by decide) (by omega)⟩
    · exact ⟨_, List.mem_cons_of_mem _ (List.mem_cons_of_mem _ (List.mem_cons_of_mem _ (List.mem_cons_self))), mem_piece y 240 64 (by decide) (by decide) (by omega)⟩
    · exact ⟨_, List.mem_cons_of_mem _ (List.mem_cons_of_mem _ (List.mem_cons_self)), mem_piece y 241 0 (by decide) (by decide) (by omega)⟩
    · exact ⟨_, List.mem_cons_of_mem _ (List.mem_cons_self), mem_piece y 241 64 (by decide) (by decide) (by omega)⟩
    · exact ⟨_, List.mem_cons_self, mem_piece y 242 0 (by decide) (by decide) (by omega)⟩

theorem cov_491 (c : Dev nD) (M0 : Memref sig .tc .vmem S64x32768 .f32) (f0 : Bf (F := F) c M0) (y : S1x256x64x128.Idx)
    (hy : 2 * (y 1).val + (y 3).val / 64 < 491) : ∃ p ∈ packRun.sl.H1_491 c M0 f0, y ∈ p.1.set := by
  by_cases hlt : 2 * (y 1).val + (y 3).val / 64 < 485
  · obtain ⟨p, hp, hm⟩ := cov_485 c M0 f0 y hlt
    exact ⟨p, List.mem_cons_of_mem _ (List.mem_cons_of_mem _ (List.mem_cons_of_mem _ (List.mem_cons_of_mem _ (List.mem_cons_of_mem _ (List.mem_cons_of_mem _ (hp)))))), hm⟩
  · rcases (show 2 * (y 1).val + (y 3).val / 64 = 485 ∨ 2 * (y 1).val + (y 3).val / 64 = 486 ∨ 2 * (y 1).val + (y 3).val / 64 = 487 ∨ 2 * (y 1).val + (y 3).val / 64 = 488 ∨ 2 * (y 1).val + (y 3).val / 64 = 489 ∨ 2 * (y 1).val + (y 3).val / 64 = 490 from by omega) with h | h | h | h | h | h
    · exact ⟨_, List.mem_cons_of_mem _ (List.mem_cons_of_mem _ (List.mem_cons_of_mem _ (List.mem_cons_of_mem _ (List.mem_cons_of_mem _ (List.mem_cons_self))))), mem_piece y 242 64 (by decide) (by decide) (by omega)⟩
    · exact ⟨_, List.mem_cons_of_mem _ (List.mem_cons_of_mem _ (List.mem_cons_of_mem _ (List.mem_cons_of_mem _ (List.mem_cons_self)))), mem_piece y 243 0 (by decide) (by decide) (by omega)⟩
    · exact ⟨_, List.mem_cons_of_mem _ (List.mem_cons_of_mem _ (List.mem_cons_of_mem _ (List.mem_cons_self))), mem_piece y 243 64 (by decide) (by decide) (by omega)⟩
    · exact ⟨_, List.mem_cons_of_mem _ (List.mem_cons_of_mem _ (List.mem_cons_self)), mem_piece y 244 0 (by decide) (by decide) (by omega)⟩
    · exact ⟨_, List.mem_cons_of_mem _ (List.mem_cons_self), mem_piece y 244 64 (by decide) (by decide) (by omega)⟩
    · exact ⟨_, List.mem_cons_self, mem_piece y 245 0 (by decide) (by decide) (by omega)⟩

theorem cov_498 (c : Dev nD) (M0 : Memref sig .tc .vmem S64x32768 .f32) (f0 : Bf (F := F) c M0) (y : S1x256x64x128.Idx)
    (hy : 2 * (y 1).val + (y 3).val / 64 < 498) : ∃ p ∈ packRun.sl.H1_498 c M0 f0, y ∈ p.1.set := by
  by_cases hlt : 2 * (y 1).val + (y 3).val / 64 < 491
  · obtain ⟨p, hp, hm⟩ := cov_491 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 491 ∨ 2 * (y 1).val + (y 3).val / 64 = 492 ∨ 2 * (y 1).val + (y 3).val / 64 = 493 ∨ 2 * (y 1).val + (y 3).val / 64 = 494 ∨ 2 * (y 1).val + (y 3).val / 64 = 495 ∨ 2 * (y 1).val + (y 3).val / 64 = 496 ∨ 2 * (y 1).val + (y 3).val / 64 = 497 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 245 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 246 0 (by decide) (by decide) (by omega)⟩
    · exact ⟨_, List.mem_cons_of_mem _ (List.mem_cons_of_mem _ (List.mem_cons_of_mem _ (List.mem_cons_of_mem _ (List.mem_cons_self)))), mem_piece y 246 64 (by decide) (by decide) (by omega)⟩
    · exact ⟨_, List.mem_cons_of_mem _ (List.mem_cons_of_mem _ (List.mem_cons_of_mem _ (List.mem_cons_self))), mem_piece y 247 0 (by decide) (by decide) (by omega)⟩
    · exact ⟨_, List.mem_cons_of_mem _ (List.mem_cons_of_mem _ (List.mem_cons_self)), mem_piece y 247 64 (by decide) (by decide) (by omega)⟩
    · exact ⟨_, List.mem_cons_of_mem _ (List.mem_cons_self), mem_piece y 248 0 (by decide) (by decide) (by omega)⟩
    · exact ⟨_, List.mem_cons_self, mem_piece y 248 64 (by decide) (by decide) (by omega)⟩

theorem cov_505 (c : Dev nD) (M0 : Memref sig .tc .vmem S64x32768 .f32) (f0 : Bf (F := F) c M0) (y : S1x256x64x128.Idx)
    (hy : 2 * (y 1).val + (y 3).val / 64 < 505) : ∃ p ∈ packRun.sl.H1_505 c M0 f0, y ∈ p.1.set := by
  by_cases hlt : 2 * (y 1).val + (y 3).val / 64 < 498
  · obtain ⟨p, hp, hm⟩ := cov_498 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 498 ∨ 2 * (y 1).val + (y 3).val / 64 = 499 ∨ 2 * (y 1).val + (y 3).val / 64 = 500 ∨ 2 * (y 1).val + (y 3).val / 64 = 501 ∨ 2 * (y 1).val + (y 3).val / 64 = 502 ∨ 2 * (y 1).val + (y 3).val / 64 = 503 ∨ 2 * (y 1).val + (y 3).val / 64 = 504 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 249 0 (by decide) (by decide) (by omega)⟩
    · exact ⟨_, List.mem_cons_of_mem _ (List.mem_cons_of_mem _ (List.mem_cons_of_mem _ (List.mem_cons_of_mem _ (List.mem_cons_of_mem _ (List.mem_cons_self))))), mem_piece y 249 64 (by decide) (by decide) (by omega)⟩
    · exact ⟨_, List.mem_cons_of_mem _ (List.mem_cons_of_mem _ (List.mem_cons_of_mem _ (List.mem_cons_of_mem _ (List.mem_cons_self)))), mem_piece y 250 0 (by decide) (by decide) (by omega)⟩
    · exact ⟨_, List.mem_cons_of_mem _ (List.mem_cons_of_mem _ (List.mem_cons_of_mem _ (List.mem_cons_self))), mem_piece y 250 64 (by decide) (by decide) (by omega)⟩
    · exact ⟨_, List.mem_cons_of_mem _ (List.mem_cons_of_mem _ (List.mem_cons_self)), mem_piece y 251 0 (by decide) (by decide) (by omega)⟩
    · exact ⟨_, List.mem_cons_of_mem _ (List.mem_cons_self), mem_piece y 251 64 (by decide) (by decide) (by omega)⟩
    · exact ⟨_, List.mem_cons_self, mem_piece y 252 0 (by decide) (by decide) (by omega)⟩

theorem cov_512 (c : Dev nD) (M0 : Memref sig .tc .vmem S64x32768 .f32) (f0 : Bf (F := F) c M0) (y : S1x256x64x128.Idx)
    (hy : 2 * (y 1).val + (y 3).val / 64 < 512) : ∃ p ∈ packRun.sl.H1_512 c M0 f0, y ∈ p.1.set := by
  by_cases hlt : 2 * (y 1).val + (y 3).val / 64 < 505
  · obtain ⟨p, hp, hm⟩ := cov_505 c M0 f0 y hlt
    exact ⟨p, List.mem_cons_of_mem _ (List.mem_cons_of_mem _ (List.mem_cons_of_mem _ (List.mem_cons_of_mem _ (List.mem_cons_of_mem _ (List.mem_cons_of_mem _ (List.mem_cons_of_mem _ (hp))))))), hm⟩
  · rcases (show 2 * (y 1).val + (y 3).val / 64 = 505 ∨ 2 * (y 1).val + (y 3).val / 64 = 506 ∨ 2 * (y 1).val + (y 3).val / 64 = 507 ∨ 2 * (y 1).val + (y 3).val / 64 = 508 ∨ 2 * (y 1).val + (y 3).val / 64 = 509 ∨ 2 * (y 1).val + (y 3).val / 64 = 510 ∨ 2 * (y 1).val + (y 3).val / 64 = 511 from by omega) with h | h | h | h | h | h | h
    · exact ⟨_, List.mem_cons_of_mem _ (List.mem_cons_of_mem _ (List.mem_cons_of_mem _ (List.mem_cons_of_mem _ (List.mem_cons_of_mem _ (List.mem_cons_of_mem _ (List.mem_cons_self)))))), mem_piece y 252 64 (by decide) (by decide) (by omega)⟩
    · exact ⟨_, List.mem_cons_of_mem _ (List.mem_cons_of_mem _ (List.mem_cons_of_mem _ (List.mem_cons_of_mem _ (List.mem_cons_of_mem _ (List.mem_cons_self))))), mem_piece y 253 0 (by decide) (by decide) (by omega)⟩
    · exact ⟨_, List.mem_cons_of_mem _ (List.mem_cons_of_mem _ (List.mem_cons_of_mem _ (List.mem_cons_of_mem _ (List.mem_cons_self)))), mem_piece y 253 64 (by decide) (by decide) (by omega)⟩
    · exact ⟨_, List.mem_cons_of_mem _ (List.mem_cons_of_mem _ (List.mem_cons_of_mem _ (List.mem_cons_self))), mem_piece y 254 0 (by decide) (by decide) (by omega)⟩
    · exact ⟨_, List.mem_cons_of_mem _ (List.mem_cons_of_mem _ (List.mem_cons_self)), mem_piece y 254 64 (by decide) (by decide) (by omega)⟩
    · exact ⟨_, List.mem_cons_of_mem _ (List.mem_cons_self), mem_piece y 255 0 (by decide) (by decide) (by omega)⟩
    · exact ⟨_, List.mem_cons_self, mem_piece y 255 64 (by decide) (by decide) (by omega)⟩

/-! ## The block read back -/

variable {Ix : Type} [DecidableEq Ix] {Name : Type} [DecidableEq Name] {U : Type} [URA U] {Lvl : Type} [Preorder Lvl]

/-- The transposing product the stores read is the printed product of the input staging buffer's contents. -/
theorem v9_eq (c : Dev nD) (M0 : Memref sig .tc .vmem S64x32768 .f32) (f0 : Bf (F := F) c M0) :
    packRun.sl.v9 c M0 f0 = k0_pay2 (M0.view.read (Elt F) f0) := by
  have hrd : ∀ inb, M0.view.readAt (Elt F) (Rect.unit (s := S64x32768) ![0, 0] S64x32768.size inb).toLoadRect f0 = M0.view.read (Elt F) f0 :=
    fun inb => funext fun x => by
      rw [View.readAt_apply]; congr 1; funext a; apply Fin.ext
      match a with
      | ⟨0, _⟩ => show 0 + 1 * (x 0).val = (x 0).val; omega
      | ⟨1, _⟩ => show 0 + 1 * (x 1).val = (x 1).val; omega
  show k0_pay2 (M0.view.readAt (Elt F) (Rect.unit (s := S64x32768) ![0, 0] S64x32768.size _).toLoadRect f0) = _
  rw [hrd]

/-- What the body leaves in the output staging buffer, read through it, is the closed form over the input staging
    buffer's contents. -/
theorem out_read (c : Dev nD) (i : grid0.Coords)
    (M0 : Memref sig .tc .vmem S64x32768 .f32) (h0 : M0.IsWhole) (M1 : Memref sig .tc .vmem S1x256x64x128 .f32) (h1 : M1.IsWhole)
    (f0 : Bf (F := F) c M0) (y : S1x256x64x128.Idx) :
    M1.view.read (Elt F) (packRun (Ix := Ix) (Name := Name) (U := U) (Lvl := Lvl) c i M0 h0 M1 h1 f0).1 y
      = outOf (k0_pay2 (M0.view.read (Elt F) f0)) y := by
  have e : (packRun (Ix := Ix) (Name := Name) (U := U) (Lvl := Lvl) c i M0 h0 M1 h1 f0).1
      = M1.view.writes (Elt F) M1.view.junk (packRun.sl.H1_512 c M0 f0) := by unfold packRun; rfl
  rw [e, ← v9_eq]
  refine View.read_writes_apply_of_pieces M1.view M1.view.junk (outOf (packRun.sl.v9 c M0 f0)) _ (pieces_512 c M0 f0) y (cov_512 c M0 f0 y ?_)
  have h1 : (y 1).val < 256 := (y 1).isLt
  have h3 : (y 3).val < 128 := (y 3).isLt
  omega

end Cert.Proof.Pack

end
-- ==== Proof.PackIdeal.lean ====
/-
  The value of the packing region at the extended reals: when the region is left the relaid table holds the
  embeddings as `Spec.TableOK` says — vocabulary row `v` at table row `v / 128 * 64 + v % 64`, columns
  `(v / 64 % 2) * 64 + c`. Block `k` of the table is what the body's stores made of the `k`-th fetched block `B`
  of the transposed embeddings: entry `(s, r, q)` is entry `(128 s + r + 64 (q / 64), q % 64)` of `Bᵀ · I`, and
  `(Bᵀ · I)[j, c] = B[c, j]`: each product with a zero of the identity vanishes, whatever the other factor. An entry
  of the table that belongs to a vocabulary row reads a column of `B` inside the array.
-/
import proofs.«203835_g19404662243951_cont_8to1_399_35_alg».proof.Proof.Pack
import proofs.«203835_g19404662243951_cont_8to1_399_35_alg».proof.Proof.PackOut
import proofs.«203835_g19404662243951_cont_8to1_399_35_alg».proof.Proof.HostVals
import Idealize.ShloMosaic.PureOps.Ideal.Laws
import Idealize.ShloMosaic.Lib.ValueIdx
import Idealize.ShloMosaic.Lib.Pipeline.Value

noncomputable section

namespace Cert.Proof.Pack

open Cert.KernelIdeal Cert.KernelIdeal.Gen

open Idealize.ShloMosaic Idealize.ShloMosaic.ValueIdx
open Idealize.ShloMosaic.TcCoe
open Idealize.ShloMosaic.SparseCore.Cfg (HIx)
open Idealize.SL Idealize.SL.RA Idealize.SL.BI Idealize.SL.Sem
open Idealize.ShloMosaic.Pipeline (RDat Cfg Window pin)

section Generic

variable {F : FTy → Type} [FloatOps F] [Named F]

/-! ## The windows' geometry at a point -/

/-- The input block at point `t`: all 64 rows, and the columns from `32768 t` to the array's end or the block's. -/
theorem xsize0 : ∀ t : Fin grid0.N, win0_0.xsize (grid0.coords t) 0 = 64
    ∧ win0_0.xsize (grid0.coords t) 1 = min 32768 (1000000 - 32768 * t.val) := by decide +kernel
theorem index0 : ∀ t : Fin grid0.N, win0_0.index t 0 = 0 ∧ win0_0.index t 1 = t.val := by decide +kernel
/-- The output block at point `t`: slab `t` of the table. -/
theorem index1 : ∀ t : Fin grid0.N, win0_1.index t 0 = t.val ∧ win0_1.index t 1 = 0 ∧ win0_1.index t 2 = 0 ∧ win0_1.index t 3 = 0 := by
  decide +kernel

variable (c : Dev nD) (a0 : Buf (Elt F) ((c : Thread nD τ).loc main_v0)) (a1 : Buf (Elt F) ((c : Thread nD τ).loc main_v1))
  (O : CellTallies nD τ sig (HIx 1)) (b : ℕ)

/-- A fetched block's entry inside the array is the array's. -/
theorem fetched0_apply (t : Fin cfg0.N) (d : (cfg0.win 0).block.Idx → Elt F (cfg0.win 0).elt) (cc : Fin 64) (j : Fin 32768)
    (h : 32768 * t.val + j.val < 1000000) :
    fetched0 c a0 t d (ix2 cc j) = a0 (ix2 cc ⟨32768 * t.val + j.val, h⟩) := by
  unfold fetched0
  have hm : (cfg0.win 0).moved (cfg0.grid.coords t) (ix2 cc j) = true := by
    rw [Window.moved_iff]; intro a
    match a with
    | ⟨0, _⟩ => show cc.val < win0_0.xsize (grid0.coords t) 0; rw [(xsize0 t).1]; exact cc.isLt
    | ⟨1, _⟩ => show j.val < win0_0.xsize (grid0.coords t) 1; rw [(xsize0 t).2]; have := j.isLt; omega
  unfold Window.fill; rw [dif_pos hm]
  rw [View.read_apply, cast_eq]
  congr 1
  funext a; apply Fin.ext
  match a with
  | ⟨0, _⟩ => show win0_0.index t 0 * 64 + 1 * cc.val = cc.val; rw [(index0 t).1]; omega
  | ⟨1, _⟩ => show win0_0.index t 1 * 32768 + 1 * j.val = 32768 * t.val + j.val; rw [(index0 t).2]; omega

/-! ## The table after the write-backs -/

/-- Block `u` of the table, as the write-back's view of it embeds the block's indices. -/
theorem blk1_emb (u : Fin cfg0.N) (s : Fin 256) (r : Fin 64) (q : Fin 128) (hu : u.val < 31) :
    ((cfg0.win 1).blk u).view.emb (ix4 (0 : Fin 1) s r q) = ix4 (⟨u.val, hu⟩ : Fin 31) s r q := by
  funext a; apply Fin.ext
  match a with
  | ⟨0, _⟩ => show win0_1.index u 0 * 1 + 1 * 0 = u.val; rw [(index1 u).1]; omega
  | ⟨1, _⟩ => show win0_1.index u 1 * 256 + 1 * s.val = s.val; rw [(index1 u).2.1]; omega
  | ⟨2, _⟩ => show win0_1.index u 2 * 64 + 1 * r.val = r.val; rw [(index1 u).2.2.1]; omega
  | ⟨3, _⟩ => show win0_1.index u 3 * 128 + 1 * q.val = q.val; rw [(index1 u).2.2.2]; omega

/-- The table after the write-backs below point `t`: every block below `t` is what the body may have left in the
    output staging buffer at that point. -/
theorem arrAt1 : ∀ (t : ℕ) (ht : t ≤ cfg0.N) (G : S31x256x64x128.Idx → Elt F .f32),
    (rdat0 c a0 a1 O b).ArrAt 1 t G →
    ∀ (k : ℕ) (hk : k < t), ∃ X, OutOK c a0 ⟨k, lt_of_lt_of_le hk ht⟩ X ∧
      ∀ (s : Fin 256) (r : Fin 64) (q : Fin 128),
        G (ix4 (⟨k, by have hN : cfg0.N = 31 := N_0; have := lt_of_lt_of_le hk ht; omega⟩ : Fin 31) s r q) = X (ix4 (0 : Fin 1) s r q) := by
  intro t
  induction t with
  | zero => intro _ _ _ k hk; omega
  | succ t ih =>
    intro ht G hG k hk
    have htN : t < cfg0.N := ht
    unfold RDat.ArrAt at hG
    simp only [dif_pos htN, flush0_1 ⟨t, htN⟩, if_true] at hG
    obtain ⟨G₀, X, hG₀, hX, rfl⟩ := hG
    have hN : cfg0.N = 31 := N_0
    by_cases hkt : k < t
    · obtain ⟨X', hX', hrd⟩ := ih (le_of_lt htN) G₀ hG₀ k hkt
      refine ⟨X', hX', fun s r q => ?_⟩
      rw [← hrd s r q]
      refine View.write_of_not_mem _ _ _ fun hmem => ?_
      obtain ⟨x, -, hx⟩ := Finset.mem_map.mp (show _ ∈ Finset.map _ _ from hmem)
      have h0 := congrArg (fun i : S31x256x64x128.Idx => (i 0).val) hx
      have hx0 : (x 0).val < 1 := (x 0).isLt
      change win0_1.index ⟨t, htN⟩ 0 * 1 + 1 * (x 0).val = k at h0
      rw [(index1 ⟨t, htN⟩).1] at h0
      simp only at h0
      omega
    · have hkt' : k = t := by omega
      subst hkt'
      obtain ⟨Y, -, hY⟩ := hX
      refine ⟨X, hY, fun s r q => ?_⟩
      have he := blk1_emb ⟨k, htN⟩ s r q (by omega)
      rw [← he, View.write_emb_of_mem _ _ (Finset.mem_univ _), cast_eq]
      exact congrArg X (funext fun a => Fin.ext rfl)

end Generic

/-! ## At the extended reals -/

/-- The identity's entry. -/
theorem eye_apply (i : S64x64.Idx) :
    (sitofp (F := Ideal) .f32 (extui 32 (cmpi .eq (addi (iota .tc S64x64 32 [0] iota_S64x64_d0_w32) (broadcast S64x64 (0#32 : BitVec 32))) (iota .tc S64x64 32 [1] iota_S64x64_d1_w32)) natLt_1_32)) i
      = if (i 0).val = (i 1).val then (1 : EReal) else 0 := by
  unfold sitofp extui cmpi addi iota broadcast
  simp only [List.foldl_cons, List.foldl_nil, Nat.zero_mul, Nat.zero_add]
  have ha : (i 0).val < 64 := (i 0).isLt
  have hb : (i 1).val < 64 := (i 1).isLt
  show ((BitVec.toInt (BitVec.setWidth 32 (IntOp.cmpi .eq (IntOp.addi (BitVec.ofNat 32 (i 0).val) 0#32) (BitVec.ofNat 32 (i 1).val))) : ℝ) : EReal) = _
  unfold IntOp.cmpi IntOp.addi
  rw [BitVec.add_zero]
  by_cases h : (i 0).val = (i 1).val
  · rw [if_pos h, h]; simp
  · rw [if_neg h]
    have hne : (BitVec.ofNat 32 (i 0).val == BitVec.ofNat 32 (i 1).val) = false := by
      rw [beq_eq_false_iff_ne]; intro he
      have := congrArg BitVec.toNat he
      simp only [BitVec.toNat_ofNat] at this
      omega
    simp [hne]

theorem pay2_apply (v0 : Vec Ideal S64x32768 .f32) (j : Fin 32768) (cc : Fin 64) :
    k0_pay2 (F := Ideal) v0 (ix2 j cc) = v0 (ix2 cc j) := by
  unfold k0_pay2
  change FloatOps.matmul _ _ _ _ (constant _ _ _) _ = _
  rw [Ideal.matmul_constant_zero_apply, shapeCast_self]
  have h1 : ∀ k, ((dot_S64x32768_S64x64_S32768x64_0_0_1_1_n_n.lhsIdx (ix2 j cc) k) 0).val = (k ⟨0, by decide⟩).val := fun k => rfl
  have h2 : ∀ k, ((dot_S64x32768_S64x64_S32768x64_0_0_1_1_n_n.lhsIdx (ix2 j cc) k) 1).val = j.val := fun k => rfl
  have h3 : ∀ k, ((dot_S64x32768_S64x64_S32768x64_0_0_1_1_n_n.rhsIdx (ix2 j cc) k) 0).val = (k ⟨0, by decide⟩).val := fun k => rfl
  have h4 : ∀ k, ((dot_S64x32768_S64x64_S32768x64_0_0_1_1_n_n.rhsIdx (ix2 j cc) k) 1).val = cc.val := fun k => rfl
  have hrk : dot_S64x32768_S64x64_S32768x64_0_0_1_1_n_n.contr.rank = 1 := rfl
  have ha0 : ∀ a : Fin dot_S64x32768_S64x64_S32768x64_0_0_1_1_n_n.contr.rank, a = ⟨0, by decide⟩ := fun a =>
    Fin.ext (by have := a.isLt; show a.val = 0; omega)
  have hsz : ∀ a : Fin dot_S64x32768_S64x64_S32768x64_0_0_1_1_n_n.contr.rank, dot_S64x32768_S64x64_S32768x64_0_0_1_1_n_n.contr.size a = 64 := fun a => by
    rw [ha0 a]; rfl
  let k₀ : dot_S64x32768_S64x64_S32768x64_0_0_1_1_n_n.contr.Idx := fun a => ⟨cc.val, by rw [hsz a]; exact cc.isLt⟩
  have hk : ∀ k : dot_S64x32768_S64x64_S32768x64_0_0_1_1_n_n.contr.Idx, (k ⟨0, by decide⟩).val = cc.val → k = k₀ := by
    intro k hk; funext a
    rw [ha0 a]; exact Fin.ext hk
  rw [Finset.sum_eq_single k₀]
  · rw [eye_apply, if_pos (by rw [h3, h4]), mul_one]
    exact congrArg v0 (funext fun a => by
      match a with
      | ⟨0, _⟩ => exact Fin.ext (h1 k₀)
      | ⟨1, _⟩ => exact Fin.ext (h2 k₀))
  · intro k _ hne
    rw [eye_apply, if_neg (by rw [h3, h4]; exact fun h => hne (hk k h)), mul_zero]
  · intro h; exact absurd (Finset.mem_univ _) h

/-- The relaid table the region leaves holds the embeddings. -/
theorem tableOK (c : Dev nD) (a0 : Buf (Elt Ideal) ((c : Thread nD τ).loc main_v0)) (a1 : Buf (Elt Ideal) ((c : Thread nD τ).loc main_v1))
    (O : CellTallies nD τ sig (HIx 1)) (b : ℕ) (emb : FVec Ideal Spec.SEmb .f32)
    (hT : ∀ (v : Fin 1000000) (cc : Fin 64), a0 (ix2 cc v) = emb (ix2 v cc))
    (f : Buf (Elt Ideal) ((c : Thread nD τ).loc main_v1)) (hf : (rdat0 c a0 a1 O b).ArrAt 1 cfg0.N f) :
    Spec.TableOK emb (asTab c f) := by
  intro v hv cc hcc
  have hN : cfg0.N = 31 := N_0
  have hr : v / 128 * 64 + v % 64 < 507904 := by omega
  have hcol : (v / 64 % 2) * 64 + cc < 128 := by omega
  unfold Spec.tabAt
  rw [dif_pos ⟨hr, hcol⟩]
  show shapeCast Spec.STab (f : S31x256x64x128.Idx → Elt Ideal .f32) hcast (ix2 ⟨_, hr⟩ ⟨_, hcol⟩) = _
  rw [HostVals.tab_read]
  obtain ⟨X, ⟨d, M0, h0, M1, h1, f0, hf0, rfl⟩, hrd⟩ :=
    arrAt1 c a0 a1 O b cfg0.N le_rfl f hf ((v / 128 * 64 + v % 64) / 16384) (by omega)
  rw [hrd, out_read]
  unfold outOf
  rw [pay2_apply, hf0]
  have hb : 32768 * ((v / 128 * 64 + v % 64) / 16384)
      + (128 * ((v / 128 * 64 + v % 64) / 64 % 256) + (v / 128 * 64 + v % 64) % 64 + 64 * ((v / 64 % 2 * 64 + cc) / 64)) < 1000000 := by
    omega
  rw [fetched0_apply c a0 _ d _ _ hb, hT]
  congr 1
  funext a; apply Fin.ext
  match a with
  | ⟨0, _⟩ =>
    show 32768 * ((v / 128 * 64 + v % 64) / 16384)
      + (128 * ((v / 128 * 64 + v % 64) / 64 % 256) + (v / 128 * 64 + v % 64) % 64 + 64 * ((v / 64 % 2 * 64 + cc) / 64)) = v
    omega
  | ⟨1, _⟩ =>
    show (v / 64 % 2 * 64 + cc) % 64 = cc
    omega

end Cert.Proof.Pack

end
-- ==== Proof.RunIdeal.lean ====
/-
  The idealized kernel's run, in the shape the claims take: on every device the six arguments unchanged and the result the
  dense stage of the bag sums of a table that holds the embeddings relaid.
-/
import proofs.«203835_g19404662243951_cont_8to1_399_35_alg».proof.Proof.ClaimsRef
import proofs.«203835_g19404662243951_cont_8to1_399_35_alg».proof.Proof.ClaimsBits
import proofs.«203835_g19404662243951_cont_8to1_399_35_alg».proof.Proof.Join
import proofs.«203835_g19404662243951_cont_8to1_399_35_alg».proof.Proof.Tile
import proofs.«203835_g19404662243951_cont_8to1_399_35_alg».proof.Proof.HostVals
import proofs.«203835_g19404662243951_cont_8to1_399_35_alg».proof.Proof.PackIdeal

noncomputable section

namespace Cert.Proof.Final

open Cert.KernelIdeal Cert.KernelIdeal.Gen
open Idealize.ShloMosaic Idealize.SL.Sem
open Cert.Proof

variable (m : (ℓ : Loc nD τ sig) → Buf (Elt Ideal) ℓ) (ρ : Dev nD → PrngReg)

/-- What is known of the relaid table at the idealized instance: it holds the embeddings, on every device. -/
def PKI : FVec Ideal Spec.STab .f32 → Prop := fun tab => ∀ c : Dev nD, Spec.TableOK (m ((Bag.TT c).loc main_arg1)) tab

/-- The relaying region leaves the embeddings relaid: what the table is known to hold at the idealized instance. -/
theorem htab : ∀ c f, (Ffnn.rdP m c).ArrAt 1 cfg0.N f → PKI m (Pack.asTab c f) := by
  intro c f h c'
  obtain rfl : c = c' := Subsingleton.elim _ _
  exact Pack.tableOK c _ _ _ 0 _ (fun v cc => HostVals.transpose_read _ _ cc v) f h

theorem kernel_run (hbody : Bag.TileBody (F := Ideal) (PKI m))
    (hpre : Cert.Pre_KernelIdeal m) :
    θ_run (Cert.KernelIdeal.defs (F := Ideal)) (Cert.KernelIdeal.threads (F := Ideal)) ⟨m, fun _ => 0, ρ⟩
      (fun r => ∀ c : Dev nD, ClaimsRef.KernelPost m r.2.mem c) := by
  have h := Bag.run_main m ρ (PKI m) (Ffnn.regions m (PKI m) (htab m)) (fun idx => HostVals.flat_eq idx _ _ _)
    (Bag.tileObl_of_body m (PKI m) hbody (fun d n => ClaimsBits.flat_range_KernelIdeal m hpre d n))
  refine (θ_run _ _ _).mono (fun r hr c => ?_) h
  obtain ⟨hargs, tab, hT, h8⟩ := hr c
  exact ⟨⟨tab, Bag.b1r m c, Bag.b2r m c, hT c, fun j => HostVals.row_read _ _ j, fun j => HostVals.row_read _ _ j, h8⟩, hargs⟩

end Cert.Proof.Final

end
-- ==== Proof.SetupB.lean ====
/-
  The program as the SparseCore launch theorem sees it: the kernel table `K` (one vector-subcore call on 2 x 16 tiles), the
  body table `D` of the two TensorCore pipelines and the SparseCore body, and the ghost algebra — the handshakes' rounds
  library, the pipelines' staging cells' rounds library, and the local transfers' counters side by side.
-/
import proofs.«203835_g19404662243951_cont_8to1_399_35_alg».proof.Kernel
import proofs.«203835_g19404662243951_cont_8to1_399_35_alg».proof.Proof.Gen.Kernel
import proofs.«203835_g19404662243951_cont_8to1_399_35_alg».proof.Proof.Gen.Kernel.Launch
import proofs.«203835_g19404662243951_cont_8to1_399_35_alg».proof.Proof.Spec
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The pipelines' staging cells' rounds library: the left half of the right factor (the transfers' counters are found
    by instance in its right half). -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays the SparseCore call works on, as the TensorCore names them -/

/-- The flat padded index array, the relaid table, the bag sums. -/
abbrev iLoc (d : Dev nD) : Loc nD τ sig := (SparseCore.T d).loc main_v4
abbrev tLoc (d : Dev nD) : Loc nD τ sig := (SparseCore.T d).loc main_v2
abbrev oLoc (d : Dev nD) : Loc nD τ sig := (SparseCore.T d).loc main_v5

/-- The worker number of tile `i` of SparseCore `c`: the kernel's `s * 2 + c`. -/
def wid (c i : Nat) : Nat := i * 2 + c

end Cert.Proof.BagB
end
-- ==== Proof.TileDefsB.lean ====
/-
  The arrays and scratches of one vector subcore's task as the kernel's body addresses them, the rows of the sums a
  task owns, and what a task is handed and hands back.

  Worker number `w = 2 s + c` (subcore `s` of SparseCore `c`) owns bags `[128 w, 128 w + 128)`: eight blocks of sixteen
  rows of the sums, block `k` being rows `[128 w + 16 k, +16)`, i.e. part `8 w + k` of the 256 equal row parts of the
  array. A task is handed a read share of the flat index array and of the relaid table and its eight blocks at whatever
  they hold; it hands back the shares and the blocks holding the bag sums.
-/
import proofs.«203835_g19404662243951_cont_8to1_399_35_alg».proof.Proof.SetupB

noncomputable section

namespace Cert.Proof.BagB
open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The kernel's operands and scratches, spelt as the body table passes them -/

abbrev iV : Memref sig .scVector .hbm S262144 .i32 := Memref.whole main_v4_scv
abbrev tV : Memref sig .scVector .hbm S507904x128 .f32 := Memref.whole main_v2_scv
abbrev oV : Memref sig .scVector .hbm S4096x64 .f32 := Memref.whole main_v5_scv
abbrev sIdx : Memref sig .scVector .vmem S2048 .i32 := Memref.whole cc1_scratch0
abbrev sTix : Memref sig .scVector .vmem S2048 .i32 := Memref.whole cc1_scratch1
abbrev sRv : Memref sig .scVector .vmem S2048 .i32 := Memref.whole cc1_scratch2
abbrev sRows : Memref sig .scVector .vmem S2x50x128 .f32 := Memref.whole cc1_scratch3
abbrev sWb : Memref sig .scVector .vmem S2x16x64 .f32 := Memref.whole cc1_scratch4

/-! ## The row blocks of the sums -/

theorem hdiv256 : 256 ∣ S4096x64.size 0 := ⟨16, rfl⟩
/-- Row part `n` of 256: rows `[16 n, 16 n + 16)`, all 64 columns. -/
abbrev blk (n : Fin 256) : Rect S4096x64 := Rect.part (s := S4096x64) (a₀ := 0) hdiv256 n
/-- Its elements, as a slice of the sums' array holds them. -/
abbrev blockSet (n : Fin 256) : Finset S4096x64.Idx := ((oV : Memref sig .scVector .hbm S4096x64 .f32).view.slice (blk n)).set
/-- Block `k` of worker `w`. -/
def blkNo (w : Fin 32) (k : Fin 8) : Fin 256 := ⟨8 * w.val + k.val, by have := w.isLt; have := k.isLt; omega⟩

/-- The worker number of tile `i` of SparseCore `c`. -/
def widF (c : Fin 2) (i : Fin 16) : Fin 32 := ⟨i.val * 2 + c.val, by have := c.isLt; have := i.isLt; omega⟩

/-! ## What a task is handed and hands back -/

variable [FloatOps F]

/-- Handed to worker `w`: a share `qi` of the flat index array at `fl`, a share `qt` of the relaid table (its contents
    satisfying `PK`), and the worker's eight row blocks of the sums at whatever they hold. -/
def goA (PK : FVec F Spec.STab .f32 → Prop) (fl : IVec Spec.SFlat 32) (qi qt : PosShare TreeShare) (d : Dev nD) (w : Fin 32) : sProp 𝕄 :=
  iprop((iLoc d ↦{qi} fl) ∗ (∃ tab : FVec F Spec.STab .f32, ⌜PK tab⌝ ∗ (tLoc d ↦{qt} tab))
    ∗ bigSep (Finset.univ : Finset (Fin 8)) fun k => iprop(∃ f, oLoc d ↦[blockSet (blkNo w k)]{fullShare} f))

/-- Handed back: the same shares, the eight blocks now holding the bag sums. -/
def tdA (PK : FVec F Spec.STab .f32 → Prop) (fl : IVec Spec.SFlat 32) (qi qt : PosShare TreeShare) (d : Dev nD) (w : Fin 32) : sProp 𝕄 :=
  iprop((iLoc d ↦{qi} fl) ∗ ∃ tab : FVec F Spec.STab .f32, ⌜PK tab⌝ ∗ (tLoc d ↦{qt} tab)
    ∗ bigSep (Finset.univ : Finset (Fin 8)) fun k => (oLoc d ↦[blockSet (blkNo w k)]{fullShare} (Spec.bagSums fl tab)))

end Cert.Proof.BagB
end
-- ==== Proof.PayB.lean ====
/-
  What the launch's handshakes carry for this program's one SparseCore call: per SparseCore, read shares of the flat index
  array and of the relaid table and the rows of the bag sums its sixteen tiles own; per tile, a sixteenth of those shares and
  its own eight blocks of sixteen rows. Going in, the rows hold anything; coming back, they hold the bag sums of the flat
  index array and of whatever the table holds. What is known of the table's contents travels as the predicate `PK`.
-/
import proofs.«203835_g19404662243951_cont_8to1_399_35_alg».proof.Proof.TileDefsB
import Idealize.ShloMosaic.Lib.Transfers

noncomputable section

namespace Cert.Proof.BagB
open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (PK : FVec F Spec.STab .f32 → Prop)

/-- The flat padded index array the SparseCore call is started on: the index argument padded to 64 words a bag. -/
def flatM (d : Dev nD) : IVec Spec.SFlat 32 := Spec.flatOf (m ((SparseCore.T d).loc main_arg0))

/-- SparseCore `c`'s read share of a whole input array, and tile `i`'s sixteenth of it. -/
abbrev qC (c : Nat) : PosShare TreeShare := shareTokN fullShare c
abbrev qT (c i : Nat) : PosShare TreeShare := shareTokN (qC c) i

/-- The worker number of tile `i` of SparseCore `c`, as an index of the 32 workers. -/
def widN (c i : Nat) : Fin 32 := ⟨(i * 2 + c) % 32, Nat.mod_lt _ (by decide)⟩

theorem widN_eq (c : Fin 2) (i : Fin 16) : widN c.val i.val = widF c i :=
  Fin.ext (Nat.mod_eq_of_lt (by have := c.isLt; have := i.isLt; omega))

variable [FloatOps F]

/-- What SparseCore `c` is handed: its shares and its sixteen tiles' blocks at whatever they hold; -/
def coreIn (d : Dev nD) (c : Nat) : sProp 𝕄 :=
  iprop((iLoc d ↦{qC c} flatM m d) ∗ (∃ tab : FVec F Spec.STab .f32, ⌜PK tab⌝ ∗ (tLoc d ↦{qC c} tab))
    ∗ bigSep (Finset.univ : Finset (Fin 16)) fun i => bigSep (Finset.univ : Finset (Fin 8)) fun k =>
        iprop(∃ f, oLoc d ↦[blockSet (blkNo (widN c i.val) k)]{fullShare} f))
/-- and what it hands back: the shares, the blocks holding the bag sums. -/
def coreOut (d : Dev nD) (c : Nat) : sProp 𝕄 :=
  iprop((iLoc d ↦{qC c} flatM m d) ∗ ∃ tab : FVec F Spec.STab .f32, ⌜PK tab⌝ ∗ (tLoc d ↦{qC c} tab)
    ∗ bigSep (Finset.univ : Finset (Fin 16)) fun i => bigSep (Finset.univ : Finset (Fin 8)) fun k =>
        (oLoc d ↦[blockSet (blkNo (widN c i.val) k)]{fullShare} (Spec.bagSums (flatM m d) tab)))

/-- Call 0's payloads; the kernel's proof consumes nothing of the launch's. -/
def P : (K (F := F)).Pay (nD := nD) (Val := Elt F) (Name := ℕ) (U := UU) where
  st := fun _ d c => coreIn m PK d c.val
  dn := fun _ d c => coreOut m PK d c.val
  go := fun _ d c i => goA PK (flatM m d) (qT c.val i.val) (qT c.val i.val) d (widN c.val i.val)
  td := fun _ d c i => tdA PK (flatM m d) (qT c.val i.val) (qT c.val i.val) d (widN c.val i.val)
  x := fun _ _ => iprop(emp)

instance P_storable : (P (F := F) m PK).IsStorable where
  st _ d c := by unfold P coreIn; infer_instance
  dn _ d c := by unfold P coreOut; infer_instance
  go _ _ _ _ := by unfold P goA; infer_instance
  td _ _ _ _ := by unfold P tdA; infer_instance

end Cert.Proof.BagB
end
-- ==== Proof.RegionB.lean ====
/-
  A TensorCore pipeline region entered from the SparseCore program's @main: the region's step of the pipeline kit, stated
  for the pipelines' own body table, is a step of the program over the SparseCore-extended table (a call of a pipeline's
  entry is the call of its lifted label).
-/
import proofs.«203835_g19404662243951_cont_8to1_399_35_alg».proof.Proof.SetupB

noncomputable section

namespace Cert.Proof.BagB
open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Neither pipeline has prefetched tables: the admissible contents are the empty ones. -/
abbrev adm : (p : Fin 2) → (pcfgs (F := F) p).Adm := fun p => (cfgs p).toPCfg_adm

/-- The staging cells of the two pipelines are pairwise distinct. -/
theorem phinj : Function.Injective (Pipeline.cellOf (nD := nD) (τ := τ) (Pipeline.pin (pcfgs (F := F)) adm)) := cellOf_inj

variable (rdats : (p : Fin 2) → (c : Dev nD) → Pipeline.RDat τ (Elt F) (HIx 1) ℕ UU ℕ (Pipeline.pin (pcfgs (F := F)) adm p) c)

set_option maxHeartbeats 4000000 in
set_option backward.isDefEq.respectTransparency.types false in
/-- One region's step inside the SparseCore program: from the TensorCore's boundary, the region's entry state, the level
    facts and the pipeline's share of the staging cells' ghost state, the lifted custom call runs to the boundary and the
    region's exit state. -/
theorem wp_region [∀ e, Nonempty (Elt F e)] {p : Fin 2}
    (R : Pipeline.RDat.RegionSeg (pcfgs (F := F)) adm rdats (none : HIx 1) defs₀ 𝒱₀ (K (F := F)).L (K (F := F)).lev p)
    (d : Dev nD) (Φ : PUnit → sProp 𝕄) :
    iprop((iprop(boundary (T d) ∗ R.post d) -∗ Φ ⟨⟩) ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Φ := by
  have hl := (K (F := F)).wp_liftProg (D (F := F)) 𝒱 (T d) Set.univ none
    (Prog.lift (.customCall (Pipeline.entry p) ())) Φ
  have h := Pipeline.RDat.RegionSeg.wp (pcfgs (F := F)) adm rdats (none : HIx 1) phinj EP defs₀ 𝒱₀
    (K (F := F)).L (K (F := F)).lev R d none (fun u hu => by cases hu) (fun _ => .ret ⟨⟩) Φ
  refine BIBase.Entails.trans ?_ (BIBase.Entails.trans h hl)
  iintro ⟨Hk, Hb, Hpre, Hlv, Hg, Ht⟩
  isplitl [Hk]
  · iintro H
    rw [wp_ret]; imodintro
    iapply Hk; iexact H
  isplitl [Hb]; · iexact Hb
  isplitl [Hpre]; · iexact Hpre
  isplitl [Hlv]; · iexact Hlv
  isplitl [Hg] <;> iassumption

end Cert.Proof.BagB
end
-- ==== Proof.LaunchElemB.lean ====
/-
  The launch element of the ghost state: the handshakes' rounds, the two pipelines' staging cells' rounds (funded here for
  both regions), nothing for the SparseCore body (its copies are local: counters only).
-/
import proofs.«203835_g19404662243951_cont_8to1_399_35_alg».proof.Proof.PayB
import proofs.«203835_g19404662243951_cont_8to1_399_35_alg».proof.Proof.RegionB

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ) (ρ : Dev nD → PrngReg)
variable (PK : FVec F Spec.STab .f32 → Prop)
variable [FloatOps F]

/-- The launch element: the handshake cells' rounds; the pipelines' staging cells' rounds; no counter yet. -/
def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What the launch element leaves device `d`'s TensorCore for its two regions: each pipeline's staging cells' ghost state
    and duty tokens. -/
def G (d : Dev nD) : sProp 𝕄 :=
  iprop((bigSep Finset.univ fun p : Fin 2 => Pipeline.cellsGhost (Pipeline.pin (pcfgs (F := F)) adm) EP p d)
    ∗ bigSep Finset.univ fun p : Fin 2 => (Pipeline.toksInit (Pipeline.pin (pcfgs (F := F)) adm) EP p d : sProp 𝕄))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m PK).x q thr) := by
  unfold u₀
  iintro Hu
  ihave H := (ownU_split _ _) $$ Hu
  icases H with ⟨HH, HP⟩
  imod (Pipeline.fund_ghost (Pipeline.pin (pcfgs (F := F)) adm) EP phinj) $$ HP with ⟨Hg, Ht⟩
  imodintro
  isplitl [HH]; · iexact HH
  isplitl [Hg Ht]
  · unfold G
    rw [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.BagB
end
-- ==== Proof.SplitB.lean ====
/-
  How one SparseCore's operands for the bag-sum call split among its sixteen tiles and how the tiles' results gather
  back: the two input arrays are read-only, so each tile takes a read share of the whole array and the remainder of the
  SparseCore's share waits for them; the tiles return the table at contents of their own choosing, which agree with the
  contents the remainder holds; the rows of the sums are already grouped by tile. Then the partition of the sums' rows
  into the 256 blocks of sixteen rows, grouped by SparseCore, tile and block.
-/
import proofs.«203835_g19404662243951_cont_8to1_399_35_alg».proof.Proof.PayB

noncomputable section

namespace Cert.Proof.BagB
open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop pointsTo_toks_split pointsTo_toks_join)

variable {F : FTy → Type}

local notation "𝕄" => MT nD τ sig (HIx 1) (Elt F) ℕ UU ℕ

/-! ## Two general steps -/

/-- A resource threaded through a family: if it survives each member's passage it survives the family's. -/
theorem bigSep_thread {I : Type} (s : Finset I) (R : sProp 𝕄) (Φ Ψ : I → sProp 𝕄)
    (h : ∀ i ∈ s, iprop(R ∗ Φ i) ⊢ iprop(R ∗ Ψ i)) : iprop(R ∗ bigSep s Φ) ⊢ iprop(R ∗ bigSep s Ψ) := by
  classical
  induction s using Finset.induction_on with
  | empty => exact .rfl
  | insert i s hi ih =>
    have ih' := ih fun i' hi' => h i' (Finset.mem_insert_of_mem hi')
    have hi' := h i (Finset.mem_insert_self i s)
    refine BIBase.Entails.trans (show iprop(R ∗ bigSep (insert i s) Φ) ⊢ iprop(R ∗ (Φ i ∗ bigSep s Φ)) from Entails.of_eq (by rw [BI.bigSep_insert hi]; rfl)) ?_
    refine BIBase.Entails.trans ?_ (show iprop(R ∗ (Ψ i ∗ bigSep s Ψ)) ⊢ iprop(R ∗ bigSep (insert i s) Ψ) from Entails.of_eq (by rw [BI.bigSep_insert hi]; rfl))
    iintro ⟨HR, HΦ, Hs⟩
    ihave H1 := hi' $$ [HR HΦ]
    · isplitl [HR]; · iexact HR
      iexact HΦ
    icases H1 with ⟨HR, HΨ⟩
    ihave H2 := ih' $$ [HR Hs]
    · isplitl [HR]; · iexact HR
      iexact Hs
    icases H2 with ⟨HR, Hs⟩
    isplitl [HR]; · iexact HR
    isplitl [HΨ]; · iexact HΨ
    iexact Hs

/-- Two read shares of one whole array hold the same contents. -/
theorem pointsTo_same {ℓ : Loc nD τ sig} {q₁ q₂ : PosShare TreeShare} {f g : Buf (Elt F) ℓ} :
    iprop((ℓ ↦{q₁} f) ∗ ℓ ↦{q₂} g) ⊢ (iprop(⌜g = f⌝ ∗ (ℓ ↦{q₁} f) ∗ ℓ ↦{q₂} g) : sProp 𝕄) := by
  refine BIBase.Entails.trans (persistent_entails_right pointsTo_agree) ?_
  iintro ⟨%hag, H⟩
  isplitr
  · ipureintro; funext i; exact (hag i (Finset.mem_inter.mpr ⟨Finset.mem_univ _, Finset.mem_univ _⟩)).1.symm
  · iexact H

/-! ## Read shares out to sixteen holders and back -/

variable [FloatOps F]

section Shares

variable (PK : FVec F Spec.STab .f32 → Prop) (fl : IVec Spec.SFlat 32) (d : Dev nD) (q : PosShare TreeShare)

/-- A holder's returned table share, at contents of its choosing, beside the remainder: the contents are the remainder's. -/
theorem table_back (tab : FVec F Spec.STab .f32) (r qi : PosShare TreeShare) (B : FVec F Spec.STab .f32 → sProp 𝕄) :
    iprop((tLoc d ↦{r} tab) ∗ ∃ tab' : FVec F Spec.STab .f32, ⌜PK tab'⌝ ∗ (tLoc d ↦{qi} tab') ∗ B tab')
      ⊢ iprop((tLoc d ↦{r} tab) ∗ ((tLoc d ↦{qi} tab) ∗ B tab)) := by
  iintro ⟨Hr, %tab', -, Hq, HB⟩
  ihave Hag := (pointsTo_same (F := F)) $$ [Hr Hq]
  · isplitl [Hr]; · iexact Hr
    iexact Hq
  icases Hag with ⟨%he, Hr, Hq⟩
  subst he
  isplitl [Hr]; · iexact Hr
  isplitl [Hq]; · iexact Hq
  iexact HB

/-- The split of one SparseCore's operands over abstract per-holder row assertions `A i` (going in) and `B i tab`
    (coming back, at the table's contents). -/
theorem split16 (A : Fin 16 → sProp 𝕄) (B : Fin 16 → FVec F Spec.STab .f32 → sProp 𝕄) :
    iprop((iLoc d ↦{q} fl) ∗ (∃ tab : FVec F Spec.STab .f32, ⌜PK tab⌝ ∗ (tLoc d ↦{q} tab)) ∗ bigSep Finset.univ A)
      ⊢ |={Set.univ}=> iprop(
        (bigSep Finset.univ fun i : Fin 16 =>
          iprop((iLoc d ↦{shareTokN q i.val} fl) ∗ (∃ tab : FVec F Spec.STab .f32, ⌜PK tab⌝ ∗ (tLoc d ↦{shareTokN q i.val} tab)) ∗ A i))
        ∗ ((bigSep Finset.univ fun i : Fin 16 =>
            iprop((iLoc d ↦{shareTokN q i.val} fl) ∗ ∃ tab : FVec F Spec.STab .f32, ⌜PK tab⌝ ∗ (tLoc d ↦{shareTokN q i.val} tab) ∗ B i tab))
          -∗ iprop((iLoc d ↦{q} fl) ∗ ∃ tab : FVec F Spec.STab .f32, ⌜PK tab⌝ ∗ (tLoc d ↦{q} tab) ∗ bigSep Finset.univ fun i => B i tab))) := by
  iintro ⟨Hi, ⟨%tab, %hPK, Ht⟩, HA⟩
  ihave Hi' := (pointsTo_toks_split q 16) $$ Hi
  icases Hi' with ⟨Hir, Hits⟩
  ihave Ht' := (pointsTo_toks_split q 16) $$ Ht
  icases Ht' with ⟨Htr, Htts⟩
  imodintro
  isplitl [Hits Htts HA]
  · rw [bigSep_sep', bigSep_sep']
    isplitl [Hits]; · iexact Hits
    isplitl [Htts]
    · have hone : ∀ i : Fin 16, (tLoc d ↦{shareTok q 16 i} tab : sProp 𝕄)
          ⊢ iprop(∃ tab : FVec F Spec.STab .f32, ⌜PK tab⌝ ∗ (tLoc d ↦{shareTokN q i.val} tab)) := fun i => by
        iintro H; iexists tab; isplitr; · ipureintro; exact hPK
        iexact H
      iapply (show (bigSep Finset.univ fun i : Fin 16 => (tLoc d ↦{shareTok q 16 i} tab : sProp 𝕄))
          ⊢ bigSep Finset.univ fun i : Fin 16 => iprop(∃ tab : FVec F Spec.STab .f32, ⌜PK tab⌝ ∗ (tLoc d ↦{shareTokN q i.val} tab))
        from bigSep_mono fun i _ => hone i)
      iexact Htts
    · iexact HA
  · iintro Htd
    ihave Htd' := (Entails.of_eq (bigSep_sep' Finset.univ (fun i : Fin 16 => (iLoc d ↦{shareTokN q i.val} fl : sProp 𝕄))
      (fun i : Fin 16 => iprop(∃ tab : FVec F Spec.STab .f32, ⌜PK tab⌝ ∗ (tLoc d ↦{shareTokN q i.val} tab) ∗ B i tab)))) $$ Htd
    icases Htd' with ⟨Hits, Hex⟩
    isplitl [Hir Hits]
    · iapply (pointsTo_toks_join q 16)
      isplitl [Hir]; · iexact Hir
      iexact Hits
    iexists tab
    isplitr; · ipureintro; exact hPK
    ihave H := (bigSep_thread (F := F) Finset.univ (tLoc d ↦{shareDrop q 16} tab)
      (fun i : Fin 16 => iprop(∃ tab' : FVec F Spec.STab .f32, ⌜PK tab'⌝ ∗ (tLoc d ↦{shareTokN q i.val} tab') ∗ B i tab'))
      (fun i : Fin 16 => iprop((tLoc d ↦{shareTokN q i.val} tab) ∗ B i tab))
      (fun i _ => table_back PK d tab (shareDrop q 16) (shareTokN q i.val) (B i))) $$ [Htr Hex]
    · isplitl [Htr]; · iexact Htr
      iexact Hex
    icases H with ⟨Htr, H⟩
    ihave H' := (Entails.of_eq (bigSep_sep' Finset.univ (fun i : Fin 16 => (tLoc d ↦{shareTokN q i.val} tab : sProp 𝕄))
      (fun i : Fin 16 => B i tab))) $$ H
    icases H' with ⟨Htts, HB⟩
    isplitl [Htr Htts]
    · iapply (pointsTo_toks_join q 16)
      isplitl [Htr]; · iexact Htr
      iexact Htts
    iexact HB

end Shares

/-! ## The split of the call's operands -/

section Split

variable (m : (ℓ : Loc nD τ sig) → Buf (Elt F) ℓ) (PK : FVec F Spec.STab .f32 → Prop)

/-- SparseCore `c`'s shares go out as the sixteen tiles' tokens and come back joined; its rows are already grouped by tile. -/
theorem vecSplit : (K (F := F)).VecSplit' (P m PK) 0 := by
  intro d c
  show coreIn m PK d c.val ⊢ |={Set.univ}=> iprop(
      (bigSep Finset.univ fun i : Fin 16 => goA PK (flatM m d) (qT c.val i.val) (qT c.val i.val) d (widN c.val i.val))
      ∗ ((bigSep Finset.univ fun i : Fin 16 => tdA PK (flatM m d) (qT c.val i.val) (qT c.val i.val) d (widN c.val i.val))
          -∗ coreOut m PK d c.val))
  unfold coreIn coreOut goA tdA
  exact split16 PK (flatM m d) d (qC c.val)
    (fun i => bigSep (Finset.univ : Finset (Fin 8)) fun k =>
      iprop(∃ f, oLoc d ↦[blockSet (blkNo (widN c.val i.val) k)]{fullShare} f))
    (fun i tab => bigSep (Finset.univ : Finset (Fin 8)) fun k =>
      (oLoc d ↦[blockSet (blkNo (widN c.val i.val) k)]{fullShare} (Spec.bagSums (flatM m d) tab)))

end Split

/-! ## The rows of the sums: 256 blocks of sixteen rows, by SparseCore, tile and block -/

omit [FloatOps F] in
/-- A block's elements are its rectangle's. -/
theorem blockSet_eq (n : Fin 256) : blockSet n = (blk n).set :=
  View.set_slice_whole _ _

omit [FloatOps F] in
theorem blocks_disjoint : ∀ n ∈ (Finset.univ : Finset (Fin 256)), ∀ n' ∈ (Finset.univ : Finset (Fin 256)), n ≠ n' →
    Disjoint (blockSet n) (blockSet n') :=
  fun n _ n' _ h => by rw [blockSet_eq, blockSet_eq]; exact Rect.part_disjoint hdiv256 h

omit [FloatOps F] in
theorem blocks_cover : (Finset.univ : Finset (Fin 256)).biUnion blockSet = Finset.univ :=
  (Finset.biUnion_congr rfl fun n _ => blockSet_eq n).trans (Rect.biUnion_part hdiv256)

omit [FloatOps F] in
/-- The whole array is its 256 blocks. -/
theorem oPts_blocks (d : Dev nD) (f : Buf (Elt F) (oLoc d)) :
    (oLoc d ↦{fullShare} f : sProp 𝕄) = bigSep Finset.univ fun n : Fin 256 => oLoc d ↦[blockSet n]{fullShare} f := by
  rw [← pointsTo_biUnion Finset.univ (ℓ := oLoc d) blockSet blocks_disjoint, blocks_cover]; try rfl

/-- Block `k` of tile `i` of SparseCore `c` is block `8 (2 i + c) + k` of the 256; every block is one of these, once. -/
def blockEquiv : Fin 2 × Fin 16 × Fin 8 ≃ Fin 256 where
  toFun p := blkNo (widN p.1.val p.2.1.val) p.2.2
  invFun n := (⟨n.val / 8 % 2, Nat.mod_lt _ (by decide)⟩, ⟨n.val / 16, by have := n.isLt; omega⟩, ⟨n.val % 8, Nat.mod_lt _ (by decide)⟩)
  left_inv := by
    rintro ⟨c, i, k⟩
    have hc := c.isLt; have hi := i.isLt; have hk := k.isLt
    have hw : (i.val * 2 + c.val) % 32 = i.val * 2 + c.val := Nat.mod_eq_of_lt (by omega)
    refine Prod.ext (Fin.ext ?_) (Prod.ext (Fin.ext ?_) (Fin.ext ?_))
    · show (8 * ((i.val * 2 + c.val) % 32) + k.val) / 8 % 2 = c.val
      rw [hw]; omega
    · show (8 * ((i.val * 2 + c.val) % 32) + k.val) / 16 = i.val
      rw [hw]; omega
    · show (8 * ((i.val * 2 + c.val) % 32) + k.val) % 8 = k.val
      rw [hw]; omega
  right_inv := by
    intro n
    have hn := n.isLt
    apply Fin.ext
    show 8 * ((n.val / 16 * 2 + n.val / 8 % 2) % 32) + n.val % 8 = n.val
    omega

omit [FloatOps F] in
/-- The whole array of sums is its blocks, grouped by SparseCore, tile and block. -/
theorem oRows_split (d : Dev nD) (f : Buf (Elt F) (oLoc d)) :
    (oLoc d ↦{fullShare} f : sProp 𝕄) = bigSep Finset.univ fun c : Fin 2 => bigSep Finset.univ fun i : Fin 16 =>
      bigSep Finset.univ fun k : Fin 8 => oLoc d ↦[blockSet (blkNo (widN c.val i.val) k)]{fullShare} f := by
  rw [oPts_blocks, bigSep_univ_equiv blockEquiv, bigSep_univ_prod]
  refine bigSep_congr fun c _ => ?_
  rw [bigSep_univ_prod]
  rfl

omit [FloatOps F] in
/-- Going in: the whole array, at whatever it holds, as every tile's blocks at some contents. -/
theorem oRows_any (d : Dev nD) (f : Buf (Elt F) (oLoc d)) :
    (oLoc d ↦{fullShare} f : sProp 𝕄) ⊢ bigSep Finset.univ fun c : Fin 2 => bigSep Finset.univ fun i : Fin 16 =>
      bigSep Finset.univ fun k : Fin 8 => iprop(∃ f', oLoc d ↦[blockSet (blkNo (widN c.val i.val) k)]{fullShare} f') := by
  rw [oRows_split]
  have hone : ∀ (c : Fin 2) (i : Fin 16) (k : Fin 8), (oLoc d ↦[blockSet (blkNo (widN c.val i.val) k)]{fullShare} f : sProp 𝕄)
      ⊢ iprop(∃ f', oLoc d ↦[blockSet (blkNo (widN c.val i.val) k)]{fullShare} f') := fun c i k => by
    iintro H; iexists f; iexact H
  exact bigSep_mono fun c _ => bigSep_mono fun i _ => bigSep_mono fun k _ => hone c i k

omit [FloatOps F] in
/-- Coming back: every tile's blocks at one contents are the whole array at it. -/
theorem oRows_join (d : Dev nD) (g : Buf (Elt F) (oLoc d)) :
    (bigSep Finset.univ fun c : Fin 2 => bigSep Finset.univ fun i : Fin 16 =>
      bigSep Finset.univ fun k : Fin 8 => (oLoc d ↦[blockSet (blkNo (widN c.val i.val) k)]{fullShare} g : sProp 𝕄))
      ⊢ (oLoc d ↦{fullShare} g : sProp 𝕄) :=
  Entails.of_eq (oRows_split d g).symm

end Cert.Proof.BagB
end
-- ==== Proof.StDnB.lean ====
/-
  Around the SparseCore call on the TensorCore's side: the three arrays held whole become the two SparseCores' operands
  and a remainder of the two read-only arrays' shares; the two SparseCores' results and that remainder are the inputs
  whole again, unchanged, and the sums at the bag sums of the table's contents.
-/
import proofs.«203835_g19404662243951_cont_8to1_399_35_alg».proof.Proof.SplitB

noncomputable section

namespace Cert.Proof.BagB
open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop pointsTo_toks_split pointsTo_toks_join)

variable {F : FTy → Type} [FloatOps F]

local notation "𝕄" => MT nD τ sig (HIx 1) (Elt F) ℕ UU ℕ

variable (m : (ℓ : Loc nD τ sig) → Buf (Elt F) ℓ) (PK : FVec F Spec.STab .f32 → Prop)

set_option maxRecDepth 16384 in
omit [FloatOps F] in
/-- A family over the call's SparseCores is a family over the two of them. -/
theorem bigSep_cores (Φ : ℕ → sProp 𝕄) :
    (bigSep Finset.univ fun c : Fin ((K (F := F)).nCore 0) => Φ c.val) = bigSep Finset.univ fun c : Fin 2 => Φ c.val :=
  (bigSep_univ_equiv (finCongr (nCore_zero (F := F))) (fun c : Fin 2 => Φ c.val)).symm

/-- Going in: each SparseCore takes a read share of the flat indices and of the table and its sixteen tiles' blocks of the
    sums; what is left of the two read shares stays behind. -/
theorem st0_intro (d : Dev nD) (tab : FVec F Spec.STab .f32) (f : Buf (Elt F) (oLoc d)) (h : PK tab) :
    iprop((iLoc d ↦{fullShare} flatM m d) ∗ (tLoc d ↦{fullShare} tab) ∗ (oLoc d ↦{fullShare} f))
      ⊢ iprop(((iLoc d ↦{shareDrop fullShare 2} flatM m d) ∗ (tLoc d ↦{shareDrop fullShare 2} tab))
        ∗ bigSep Finset.univ fun c : Fin ((K (F := F)).nCore 0) => (P m PK).st 0 d c) := by
  rw [show (bigSep Finset.univ fun c : Fin ((K (F := F)).nCore 0) => (P m PK).st 0 d c)
      = bigSep Finset.univ fun c : Fin ((K (F := F)).nCore 0) => coreIn m PK d c.val from rfl,
    bigSep_cores (F := F) (fun c => coreIn m PK d c)]
  unfold coreIn
  rw [bigSep_sep', bigSep_sep']
  iintro ⟨Hi, Ht, Ho⟩
  ihave Hi' := (pointsTo_toks_split fullShare 2) $$ Hi
  icases Hi' with ⟨Hir, Hits⟩
  ihave Ht' := (pointsTo_toks_split fullShare 2) $$ Ht
  icases Ht' with ⟨Htr, Htts⟩
  ihave Ho' := (oRows_any (F := F) d f) $$ Ho
  isplitl [Hir Htr]
  · isplitl [Hir]; · iexact Hir
    iexact Htr
  isplitl [Hits]; · iexact Hits
  isplitl [Htts]
  · have hone : ∀ c : Fin 2, (tLoc d ↦{shareTok fullShare 2 c} tab : sProp 𝕄)
        ⊢ iprop(∃ tab : FVec F Spec.STab .f32, ⌜PK tab⌝ ∗ (tLoc d ↦{qC c.val} tab)) := fun c => by
      iintro H; iexists tab; isplitr; · ipureintro; exact h
      iexact H
    iapply (show (bigSep Finset.univ fun c : Fin 2 => (tLoc d ↦{shareTok fullShare 2 c} tab : sProp 𝕄))
        ⊢ bigSep Finset.univ fun c : Fin 2 => iprop(∃ tab : FVec F Spec.STab .f32, ⌜PK tab⌝ ∗ (tLoc d ↦{qC c.val} tab))
      from bigSep_mono fun c _ => hone c)
    iexact Htts
  · iexact Ho'

set_option maxRecDepth 16384 in
/-- Coming back: each SparseCore's table share, at contents of its choosing, agrees with the remainder's; the shares join
    and the blocks, all at the bag sums of those contents, are the whole array of sums. -/
theorem dn0_elim (d : Dev nD) (tab : FVec F Spec.STab .f32) :
    iprop(((iLoc d ↦{shareDrop fullShare 2} flatM m d) ∗ (tLoc d ↦{shareDrop fullShare 2} tab))
        ∗ bigSep Finset.univ fun c : Fin ((K (F := F)).nCore 0) => (P m PK).dn 0 d c)
      ⊢ iprop((iLoc d ↦{fullShare} flatM m d) ∗ (tLoc d ↦{fullShare} tab)
        ∗ (oLoc d ↦{fullShare} (Spec.bagSums (flatM m d) tab : Buf (Elt F) (oLoc d)))) := by
  rw [show (bigSep Finset.univ fun c : Fin ((K (F := F)).nCore 0) => (P m PK).dn 0 d c)
      = bigSep Finset.univ fun c : Fin ((K (F := F)).nCore 0) => coreOut m PK d c.val from rfl,
    bigSep_cores (F := F) (fun c => coreOut m PK d c)]
  unfold coreOut
  rw [bigSep_sep']
  iintro ⟨⟨Hir, Htr⟩, Hits, Hex⟩
  isplitl [Hir Hits]
  · iapply (pointsTo_toks_join fullShare 2)
    isplitl [Hir]; · iexact Hir
    iexact Hits
  ihave H := (bigSep_thread (F := F) Finset.univ (tLoc d ↦{shareDrop fullShare 2} tab)
    (fun c : Fin 2 => iprop(∃ tab' : FVec F Spec.STab .f32, ⌜PK tab'⌝ ∗ (tLoc d ↦{qC c.val} tab')
      ∗ bigSep (Finset.univ : Finset (Fin 16)) fun i => bigSep (Finset.univ : Finset (Fin 8)) fun k =>
        (oLoc d ↦[blockSet (blkNo (widN c.val i.val) k)]{fullShare} (Spec.bagSums (flatM m d) tab'))))
    (fun c : Fin 2 => iprop((tLoc d ↦{qC c.val} tab)
      ∗ bigSep (Finset.univ : Finset (Fin 16)) fun i => bigSep (Finset.univ : Finset (Fin 8)) fun k =>
        (oLoc d ↦[blockSet (blkNo (widN c.val i.val) k)]{fullShare} (Spec.bagSums (flatM m d) tab))))
    (fun c _ => table_back PK d tab (shareDrop fullShare 2) (qC c.val)
      (fun tab' => bigSep (Finset.univ : Finset (Fin 16)) fun i => bigSep (Finset.univ : Finset (Fin 8)) fun k =>
        (oLoc d ↦[blockSet (blkNo (widN c.val i.val) k)]{fullShare} (Spec.bagSums (flatM m d) tab'))))) $$ [Htr Hex]
  · isplitl [Htr]; · iexact Htr
    iexact Hex
  icases H with ⟨Htr, H⟩
  ihave H' := (Entails.of_eq (bigSep_sep' Finset.univ (fun c : Fin 2 => (tLoc d ↦{qC c.val} tab : sProp 𝕄))
    (fun c : Fin 2 => bigSep (Finset.univ : Finset (Fin 16)) fun i => bigSep (Finset.univ : Finset (Fin 8)) fun k =>
      (oLoc d ↦[blockSet (blkNo (widN c.val i.val) k)]{fullShare} (Spec.bagSums (flatM m d) tab))))) $$ H
  icases H' with ⟨Htts, HB⟩
  isplitl [Htr Htts]
  · iapply (pointsTo_toks_join fullShare 2)
    isplitl [Htr]; · iexact Htr
    iexact Htts
  iapply (oRows_join (F := F) d (Spec.bagSums (flatM m d) tab))
  iexact HB

end Cert.Proof.BagB
end
-- ==== Proof.FfnnDataB.lean ====
/-
  Region 1 (the feed-forward head as a pipeline of 8 points over blocks of 512 rows): the pipeline's proof data on a core.

  The arrays are what the region finds in them (`V`: the core's buffers when the region is entered). The five input
  windows' staging buffers hold their blocks at every point, fetched there or not (the four parameter arrays are one block
  each, fetched at the first point and left in place); the result window's buffer is left at the head of the block of
  sums, `Ffnn.block`, and written back at every point. Between points the body keeps nothing but the core's scoped
  buffers that no window stages, untouched. What the core owes does not change, and the pairs its waits have recorded stay within a given set `B`.
-/
import proofs.«203835_g19404662243951_cont_8to1_399_35_alg».proof.Proof.SetupB
import proofs.«203835_g19404662243951_cont_8to1_399_35_alg».proof.Proof.FfnnSpec
import proofs.«203835_g19404662243951_cont_8to1_399_35_alg».proof.Proof.Gen.Kernel.Points
import Idealize.ShloMosaic.Lib.Pipeline.FrameBody
import Idealize.ShloMosaic.Lib.Pipeline.Value

noncomputable section

namespace Cert.Proof.FfnnB
open Cert.Proof.Ffnn

open Cert.Kernel Cert.Kernel.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig (HIx 1) (Elt F) ℕ BagB.UU ℕ

/-- The scale: the program's constant for 1/50. -/
abbrev k50 : F .f32 := Scalar.ofBits .f32 0x3CA3D70A#32

variable (c : Dev nD) (V : (b : Ref sig .tc) → Buf (Elt F) ((c : Thread nD τ).loc b)) (O : CellTallies nD τ sig (HIx 1))
  (B : Set (SemLoc sig × HIx 1))

/-- Window `w`'s block at point `t`, read off its array as the region finds it. -/
def iblk (w : Fin cfg2.W) (t : Fin cfg2.N) : ((cfg2.win w).xblock (cfg2.grid.coords t)).Idx → Elt F (cfg2.win w).elt :=
  ((cfg2.win w).blk t).view.read (Elt F) (V (Pipeline.arrRef spec2 w))

/-- The head of the block of sums at point `t`. -/
def oblk (t : Fin cfg2.N) : FVec F SO .f32 :=
  block k50 (iblk c V 0 t) (iblk c V 1 t) (iblk c V 2 t) (iblk c V 3 t) (iblk c V 4 t)

/-- The proof data of pipeline 1 on core `c`. -/
def dat1 : Dat τ (Elt F) (HIx 1) ℕ BagB.UU ℕ cfg2 c where
  A w := V (Pipeline.arrRef spec2 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => oblk c V t
  Φ _ := Pipeline.scopedRest (Ix := HIx 1) (Name := ℕ) (U := BagB.UU) (Lvl := ℕ) (Val := Elt F) spec2 c
  q _ := fullShare
  owed _ := O
  recorded _ := B

theorem A_eq (w : Fin cfg2.W) : (dat1 c V O B).A w = V (Pipeline.arrRef spec2 w) := rfl

theorem after_0 (t : Fin cfg2.N) : (dat1 c V O B).after 0 t = iblk c V 0 t := by dsimp only [dat1]
theorem after_1 (t : Fin cfg2.N) : (dat1 c V O B).after 1 t = iblk c V 1 t := by dsimp only [dat1]
theorem after_2 (t : Fin cfg2.N) : (dat1 c V O B).after 2 t = iblk c V 2 t := by dsimp only [dat1]
theorem after_3 (t : Fin cfg2.N) : (dat1 c V O B).after 3 t = iblk c V 3 t := by dsimp only [dat1]
theorem after_4 (t : Fin cfg2.N) : (dat1 c V O B).after 4 t = iblk c V 4 t := by dsimp only [dat1]
theorem after_5 (t : Fin cfg2.N) : (dat1 c V O B).after 5 t = oblk c V t := by dsimp only [dat1]

/-- Each input's current staging buffer holds its block at every point. -/
theorem before_0 (t : Fin cfg2.N) (d) : (dat1 c V O B).before 0 t d = iblk c V 0 t :=
  ((dat1 c V O B).before_in_eq_fetched 0 rfl (fun _ => rfl) (fun _ _ _ => rfl) (fun t => by rw [after_0]; rfl) t d).trans
    (by unfold Dat.fetched Dat.blockOf iblk; rfl)
theorem before_1 (t : Fin cfg2.N) (d) : (dat1 c V O B).before 1 t d = iblk c V 1 t :=
  ((dat1 c V O B).before_in_eq_fetched 1 rfl (fun _ => rfl) (fun _ _ _ => rfl) (fun t => by rw [after_1]; rfl) t d).trans
    (by unfold Dat.fetched Dat.blockOf iblk; rfl)
theorem before_2 (t : Fin cfg2.N) (d) : (dat1 c V O B).before 2 t d = iblk c V 2 t :=
  ((dat1 c V O B).before_in_eq_fetched 2 rfl (fun _ => rfl) (fun _ _ _ => rfl) (fun t => by rw [after_2]; rfl) t d).trans
    (by unfold Dat.fetched Dat.blockOf iblk; rfl)
theorem before_3 (t : Fin cfg2.N) (d) : (dat1 c V O B).before 3 t d = iblk c V 3 t :=
  ((dat1 c V O B).before_in_eq_fetched 3 rfl (fun _ => rfl) (fun _ _ _ => rfl) (fun t => by rw [after_3]; rfl) t d).trans
    (by unfold Dat.fetched Dat.blockOf iblk; rfl)
theorem before_4 (t : Fin cfg2.N) (d) : (dat1 c V O B).before 4 t d = iblk c V 4 t :=
  ((dat1 c V O B).before_in_eq_fetched 4 rfl (fun _ => rfl) (fun _ _ _ => rfl) (fun t => by rw [after_4]; rfl) t d).trans
    (by unfold Dat.fetched Dat.blockOf iblk; rfl)

/-- The result's staging buffer is fresh at every point: the block is written back after each. -/
theorem before_5 (t : Fin cfg2.N) (d) : (dat1 c V O B).before 5 t d = d := by
  refine (dat1 c V O B).before_out_reset 5 rfl t ?_ d
  by_cases h : t.val = 0
  · exact .inl h
  · exact .inr ⟨h, flush2_5 _⟩

/-- The pairs at or below level `b` on the core's TensorCore. -/
abbrev lvlSet (b : ℕ) : Set (SemLoc sig × HIx 1) := {p | (BagB.K (F := F)).lev ((c : Thread nD τ), p.1) p.2 ≤ b}

/-- The proof data with the recorded pairs bounded by a level. -/
abbrev dat1b (b : ℕ) : Dat τ (Elt F) (HIx 1) ℕ BagB.UU ℕ cfg2 c := dat1 c V O (lvlSet (F := F) c b)

end Cert.Proof.FfnnB
end
-- ==== Proof.MainB.lean ====
/-
  @main on the TensorCore: the transpose, the relaying region, the reshapes and the pad, the SparseCore call, the two
  reshapes, the dense region.
-/
import proofs.«203835_g19404662243951_cont_8to1_399_35_alg».proof.Proof.LaunchElemB
import proofs.«203835_g19404662243951_cont_8to1_399_35_alg».proof.Proof.StDnB
import proofs.«203835_g19404662243951_cont_8to1_399_35_alg».proof.Proof.FfnnDataB

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ) (ρ : Dev nD → PrngReg)
variable (PK : FVec F Spec.STab .f32 → Prop)
variable [FloatOps F]

/-- Device `d`'s TensorCore thread. -/
abbrev TT (d : Dev nD) : Thread nD τ := SparseCore.T d

/-! ## @main's arrays as one held set -/

abbrev rr (b : Ref sig .tc) : DevRef τ sig := Proc.devRef .tc b

/-- The TensorCore's references into the device's buffers. -/
def refEmb : Ref sig .tc ↪ DevRef τ sig := ⟨Proc.devRef .tc, Proc.devRef_injective _⟩

/-- @main's arrays: every unscoped buffer of the TensorCore. -/
abbrev Sall : Finset (DevRef τ sig) :=
  {rr main_arg0, rr main_arg1, rr main_arg2, rr main_arg3, rr main_arg4, rr main_arg5, rr main_v0, rr main_v1, rr main_v2, rr main_c,
    rr main_call0_v0, rr main_v3, rr main_v4, rr main_v5, rr main_v6, rr main_v7, rr main_v8}

theorem Sall_eq : (Finset.univ.filter fun b : Ref sig .tc => ¬ b.isScoped).map refEmb = Sall := by decide

/-- The launch valuation. -/
def V0 (d : Dev nD) : Valuation τ sig (Elt F) := fun b => m (d, b)

omit [FloatOps F] in
theorem unscoped_held (d : Dev nD) (W : Valuation τ sig (Elt F)) :
    (unscopedBufs d (fun b => W (rr b)) : sProp 𝕄) = held (TT d) Sall W := by
  unfold unscopedBufs held
  rw [← Sall_eq, bigSep_map]
  rfl

/-! ## The host operations of @main -/

section Ops

abbrev o1 : HloOp τ sig (Elt F) :=
  StableHlo.unary main_arg1 main_v0 ((transpose S64x1000000 [1, 0] · Shapes1.Facts₀.transposes_S1000000x64_S64x1000000_1_0) : (⟨S1000000x64, .f32⟩ : BufTy).Contents (Elt F) → (⟨S64x1000000, .f32⟩ : BufTy).Contents (Elt F))
abbrev o2 : HloOp τ sig (Elt F) := StableHlo.reshape main_v1 main_v2 rfl Shapes2.Facts₀.shapeCasts_S31x256x64x128_S507904x128
abbrev o3 : HloOp τ sig (Elt F) := StableHlo.nullary main_c (constantI S_ 32 0#32)
abbrev o4 : HloOp τ sig (Elt F) := StableHlo.TRef.unary (StableHlo.TRef.of main_c : StableHlo.TRef sig ⟨S_, .i32⟩) main_call0.v0 id
abbrev o5 : HloOp τ sig (Elt F) :=
  StableHlo.TRef.binary (StableHlo.TRef.of main_arg0 : StableHlo.TRef sig ⟨S4096x50, .i32⟩) main_call0.v0 main_call0.v1 (fun x v => pad S4096x64 ![0, 0] ![0, 14] ![0, 0] x v Shapes2.Facts₀.pads_S4096x50_S4096x64_000_0140 Shapes2.Facts₀.h_S_)
abbrev o6 : HloOp τ sig (Elt F) := StableHlo.reshape main_v3 main_v4 rfl Shapes2.Facts₀.shapeCasts_S4096x64_S262144
abbrev o7 : HloOp τ sig (Elt F) := StableHlo.reshape main_arg3 main_v6 rfl Shapes2.Facts₀.shapeCasts_S256_S1x256
abbrev o8 : HloOp τ sig (Elt F) := StableHlo.reshape main_arg5 main_v7 rfl Shapes2.Facts₀.shapeCasts_S50_S1x50

theorem h1 : (o1 (F := F)).bufs ⊆ Sall := show ({rr main_arg1, rr main_v0} : Finset (DevRef τ sig)) ⊆ Sall by decide
theorem h2 : (o2 (F := F)).bufs ⊆ Sall := show ({rr main_v1, rr main_v2} : Finset (DevRef τ sig)) ⊆ Sall by decide
theorem h3 : (o3 (F := F)).bufs ⊆ Sall := show ({rr main_c} : Finset (DevRef τ sig)) ⊆ Sall by decide
theorem h4 : (o4 (F := F)).bufs ⊆ Sall := show ({rr main_c, rr main_call0_v0} : Finset (DevRef τ sig)) ⊆ Sall by decide
theorem h5 : (o5 (F := F)).bufs ⊆ Sall := show ({rr main_arg0, rr main_call0_v0, rr main_v3} : Finset (DevRef τ sig)) ⊆ Sall by decide
theorem h6 : (o6 (F := F)).bufs ⊆ Sall := show ({rr main_v3, rr main_v4} : Finset (DevRef τ sig)) ⊆ Sall by decide
theorem h7 : (o7 (F := F)).bufs ⊆ Sall := show ({rr main_arg3, rr main_v6} : Finset (DevRef τ sig)) ⊆ Sall by decide
theorem h8 : (o8 (F := F)).bufs ⊆ Sall := show ({rr main_arg5, rr main_v7} : Finset (DevRef τ sig)) ⊆ Sall by decide

end Ops

/-! ## Taking an array out of the held set and putting it back -/

omit [FloatOps F] in
theorem held_update (c : Thread nD τ) (S : Finset (DevRef τ sig)) (W : Valuation τ sig (Elt F)) (b : DevRef τ sig) (f : b.ty.Contents (Elt F))
    (hb : b ∉ S) : (held c S (Function.update W b f) : sProp 𝕄) = held c S W :=
  StableHlo.held_congr c fun b' hb' => Function.update_of_ne (fun (e : b' = b) => hb (e ▸ hb')) _ _

omit [FloatOps F] in
theorem held_take (c : Thread nD τ) (S : Finset (DevRef τ sig)) (W : Valuation τ sig (Elt F)) (b : DevRef τ sig) (hb : b ∈ S) :
    (held c S W : sProp 𝕄) = iprop(((c.1, b) ↦{fullShare} W b) ∗ held c (S.erase b) W) := by
  unfold held; exact bigSep_erase hb

omit [FloatOps F] in
theorem held_put (c : Thread nD τ) (S : Finset (DevRef τ sig)) (W : Valuation τ sig (Elt F)) (b : DevRef τ sig) (hb : b ∈ S) (f : b.ty.Contents (Elt F)) :
    (iprop(((c.1, b) ↦{fullShare} f) ∗ held c (S.erase b) W) : sProp 𝕄) = held c S (Function.update W b f) := by
  rw [held_take c S (Function.update W b f) b hb, Function.update_self, held_update c _ W b f (Finset.notMem_erase b S)]

/-! ## What @main leaves -/

variable [∀ e, Nonempty (Elt F e)]

/-- The transposed embeddings, and the biases as rows: what the transpose and the two reshapes of @main leave. -/
def a0 (d : Dev nD) : Buf (Elt F) ((TT d).loc main_v0) :=
  transpose S64x1000000 [1, 0] (m ((TT d).loc main_arg1)) Shapes1.Facts₀.transposes_S1000000x64_S64x1000000_1_0
def b1r (d : Dev nD) : Buf (Elt F) ((TT d).loc main_v6) := shapeCast S1x256 (m ((TT d).loc main_arg3)) Shapes2.Facts₀.shapeCasts_S256_S1x256
def b2r (d : Dev nD) : Buf (Elt F) ((TT d).loc main_v7) := shapeCast S1x50 (m ((TT d).loc main_arg5)) Shapes2.Facts₀.shapeCasts_S50_S1x50

/-- The program's result as a function of the launch memory and of what the relaid table holds. -/
def OUT (d : Dev nD) (tab : FVec F Spec.STab .f32) : Buf (Elt F) ((TT d).loc main_v8) :=
  Ffnn.out (FfnnB.k50 (F := F)) (Spec.bagSums (flatM m d) tab) (m ((TT d).loc main_arg2)) (b1r m d) (m ((TT d).loc main_arg4)) (b2r m d)

/-- The TensorCore's debt component of its handshake state. -/
abbrev owesB (d : Dev nD) (O : CellTallies nD τ sig (HIx 1)) (b : ℕ) : sProp 𝕄 :=
  iprop(∃ W, ⌜(K (F := F)).WBelow (TT d) W b⌝ ∗ owes (TT d) O W)

/-- The two TensorCore regions as the pipeline kit certifies them, with their entry and exit states spelt over @main's arrays. -/
structure Regions where
  rd0 : (p : Fin 2) → (c : Dev nD) → Pipeline.RDat τ (Elt F) (HIx 1) ℕ UU ℕ (Pipeline.pin (pcfgs (F := F)) adm p) c
  R0 : Pipeline.RDat.RegionSeg (pcfgs (F := F)) adm rd0 (none : HIx 1) defs₀ 𝒱₀ (K (F := F)).L (K (F := F)).lev 0
  pre0 : ∀ d, iprop(((TT d).loc main_v0 ↦{fullShare} a0 m d) ∗ ((TT d).loc main_v1 ↦{fullShare} m ((TT d).loc main_v1))
      ∗ owesB d ((K (F := F)).Otc d 0) 0) ⊢ R0.pre d
  post0 : ∀ d, R0.post d ⊢ iprop(((TT d).loc main_v0 ↦{fullShare} a0 m d)
      ∗ (∃ f : Buf (Elt F) ((TT d).loc main_v1), ((TT d).loc main_v1 ↦{fullShare} f) ∗ ⌜PK (shapeCast S507904x128 f Shapes2.Facts₀.shapeCasts_S31x256x64x128_S507904x128)⌝)
      ∗ owesB d ((K (F := F)).Otc d 0) 0)
  rd1 : FVec F Spec.STab .f32 → (p : Fin 2) → (c : Dev nD) → Pipeline.RDat τ (Elt F) (HIx 1) ℕ UU ℕ (Pipeline.pin (pcfgs (F := F)) adm p) c
  R1 : ∀ tab, Pipeline.RDat.RegionSeg (pcfgs (F := F)) adm (rd1 tab) (none : HIx 1) defs₀ 𝒱₀ (K (F := F)).L (K (F := F)).lev 1
  pre1 : ∀ tab d, iprop(((TT d).loc main_v5 ↦{fullShare} (Spec.bagSums (flatM m d) tab : Buf (Elt F) ((TT d).loc main_v5)))
      ∗ ((TT d).loc main_arg2 ↦{fullShare} m ((TT d).loc main_arg2)) ∗ ((TT d).loc main_v6 ↦{fullShare} b1r m d)
      ∗ ((TT d).loc main_arg4 ↦{fullShare} m ((TT d).loc main_arg4)) ∗ ((TT d).loc main_v7 ↦{fullShare} b2r m d)
      ∗ ((TT d).loc main_v8 ↦{fullShare} m ((TT d).loc main_v8)) ∗ owesB d (0 : CellTallies nD τ sig (HIx 1)) 8) ⊢ (R1 tab).pre d
  post1 : ∀ tab d, (R1 tab).post d ⊢ iprop(((TT d).loc main_v5 ↦{fullShare} (Spec.bagSums (flatM m d) tab : Buf (Elt F) ((TT d).loc main_v5)))
      ∗ ((TT d).loc main_arg2 ↦{fullShare} m ((TT d).loc main_arg2)) ∗ ((TT d).loc main_v6 ↦{fullShare} b1r m d)
      ∗ ((TT d).loc main_arg4 ↦{fullShare} m ((TT d).loc main_arg4)) ∗ ((TT d).loc main_v7 ↦{fullShare} b2r m d)
      ∗ ((TT d).loc main_v8 ↦{fullShare} OUT m d tab) ∗ owesB d (0 : CellTallies nD τ sig (HIx 1)) 8)

/-- What @main leaves the claim on device `d`: the six arguments at their launch contents, the result at `OUT` of a table
    of which `PK` holds. -/
def FIN (d : Dev nD) : sProp 𝕄 :=
  iprop(((TT d).loc main_arg0 ↦{fullShare} m ((TT d).loc main_arg0)) ∗ ((TT d).loc main_arg1 ↦{fullShare} m ((TT d).loc main_arg1))
    ∗ ((TT d).loc main_arg2 ↦{fullShare} m ((TT d).loc main_arg2)) ∗ ((TT d).loc main_arg3 ↦{fullShare} m ((TT d).loc main_arg3))
    ∗ ((TT d).loc main_arg4 ↦{fullShare} m ((TT d).loc main_arg4)) ∗ ((TT d).loc main_arg5 ↦{fullShare} m ((TT d).loc main_arg5))
    ∗ ∃ tab : FVec F Spec.STab .f32, ⌜PK tab⌝ ∗ ((TT d).loc main_v8 ↦{fullShare} OUT m d tab))

/-! ## The valuations along @main -/

section Vals
variable (d : Dev nD)

/-- After the transpose. -/
def V1 : Valuation τ sig (Elt F) := (o1 (F := F)).result (V0 m d)
/-- After the relaying region left `f1` in main_v1, and the five operations up to the flat index array. -/
def V6 (f1 : Buf (Elt F) ((TT d).loc main_v1)) : Valuation τ sig (Elt F) :=
  StableHlo.after [o2, o3, o4, o5, o6] (Function.update (V1 m d) (rr main_v1) f1)
/-- After the SparseCore call left `s` in main_v5, and the two reshapes of the biases. -/
def V8 (f1 : Buf (Elt F) ((TT d).loc main_v1)) (s : Buf (Elt F) ((TT d).loc main_v5)) : Valuation τ sig (Elt F) :=
  StableHlo.after [o7, o8] (Function.update (V6 m d f1) (rr main_v5) s)

theorem V1_v0 : (o1 (F := F)).result (V0 m d) (rr main_v0) = a0 m d := by
  unfold a0; rw [StableHlo.unary_result]; rfl
theorem V1_v1 : (o1 (F := F)).result (V0 m d) (rr main_v1) = m ((TT d).loc main_v1) := by
  rw [StableHlo.unary_result_ne (h := by decide)]; rfl

/-- The valuation when the relaying region has left `f1` in main_v1. -/
def W1 (f1 : Buf (Elt F) ((TT d).loc main_v1)) : Valuation τ sig (Elt F) := Function.update ((o1 (F := F)).result (V0 m d)) (rr main_v1) f1
/-- After the five operations up to the flat index array. -/
def W6 (f1 : Buf (Elt F) ((TT d).loc main_v1)) : Valuation τ sig (Elt F) :=
  StableHlo.after [o2 (F := F), o3, o4, o5, o6] (W1 m d f1)

theorem W6_def (f1 : Buf (Elt F) ((TT d).loc main_v1)) :
    (o6 (F := F)).result ((o5 (F := F)).result ((o4 (F := F)).result ((o3 (F := F)).result ((o2 (F := F)).result (W1 m d f1))))) = W6 m d f1 := rfl

theorem W1_v0 (f1 : Buf (Elt F) ((TT d).loc main_v1)) : W1 m d f1 (rr main_v0) = a0 m d := by
  unfold W1; rw [Function.update_of_ne (by decide)]; exact V1_v0 m d

theorem W6_v4 (hfl : ∀ idx : IVec S4096x50 32,
      shapeCast S262144 (pad S4096x64 ![0, 0] ![0, 14] ![0, 0] idx (id (constantI S_ 32 0#32)) Shapes2.Facts₀.pads_S4096x50_S4096x64_000_0140 Shapes2.Facts₀.h_S_)
        Shapes2.Facts₀.shapeCasts_S4096x64_S262144 = Spec.flatOf idx)
    (f1 : Buf (Elt F) ((TT d).loc main_v1)) : W6 m d f1 (rr main_v4) = flatM m d := by
  unfold W6 flatM
  rw [← hfl]
  after_results
  unfold W1
  rw [Function.update_of_ne (by decide), StableHlo.unary_result_ne (h := by decide)]
  rfl

theorem W6_v2 (f1 : Buf (Elt F) ((TT d).loc main_v1)) :
    W6 m d f1 (rr main_v2) = shapeCast S507904x128 f1 Shapes2.Facts₀.shapeCasts_S31x256x64x128_S507904x128 := by
  unfold W6
  after_results
  unfold W1
  rw [Function.update_self]
  rfl

theorem W6_v5 (f1 : Buf (Elt F) ((TT d).loc main_v1)) : W6 m d f1 (rr main_v5) = m ((TT d).loc main_v5) := by
  unfold W6
  after_results
  unfold W1
  rw [Function.update_of_ne (by decide), StableHlo.unary_result_ne (h := by decide)]
  rfl

/-- After the SparseCore call has left the bag sums of the table `tab` in main_v5. -/
def W7 (f1 : Buf (Elt F) ((TT d).loc main_v1)) (s : Buf (Elt F) ((TT d).loc main_v5)) : Valuation τ sig (Elt F) :=
  Function.update (W6 m d f1) (rr main_v5) s

theorem W7_v2 (f1 : Buf (Elt F) ((TT d).loc main_v1)) (s : Buf (Elt F) ((TT d).loc main_v5)) :
    W7 m d f1 s (rr main_v2) = shapeCast S507904x128 f1 Shapes2.Facts₀.shapeCasts_S31x256x64x128_S507904x128 := by
  unfold W7; rw [Function.update_of_ne (by decide)]; exact W6_v2 m d f1
theorem W7_v4 (hfl : ∀ idx : IVec S4096x50 32,
      shapeCast S262144 (pad S4096x64 ![0, 0] ![0, 14] ![0, 0] idx (id (constantI S_ 32 0#32)) Shapes2.Facts₀.pads_S4096x50_S4096x64_000_0140 Shapes2.Facts₀.h_S_)
        Shapes2.Facts₀.shapeCasts_S4096x64_S262144 = Spec.flatOf idx)
    (f1 : Buf (Elt F) ((TT d).loc main_v1)) (s : Buf (Elt F) ((TT d).loc main_v5)) : W7 m d f1 s (rr main_v4) = flatM m d := by
  unfold W7; rw [Function.update_of_ne (by decide)]; exact W6_v4 m d hfl f1

/-- After the two reshapes of the biases. -/
def W9 (f1 : Buf (Elt F) ((TT d).loc main_v1)) (s : Buf (Elt F) ((TT d).loc main_v5)) : Valuation τ sig (Elt F) :=
  StableHlo.after [o7 (F := F), o8] (W7 m d f1 s)
theorem W9_def (f1 : Buf (Elt F) ((TT d).loc main_v1)) (s : Buf (Elt F) ((TT d).loc main_v5)) :
    (o8 (F := F)).result ((o7 (F := F)).result (W7 m d f1 s)) = W9 m d f1 s := rfl

section W9
variable (f1 : Buf (Elt F) ((TT d).loc main_v1)) (s : Buf (Elt F) ((TT d).loc main_v5))

theorem W9_v5 : W9 m d f1 s (rr main_v5) = s := by
  unfold W9; after_results; unfold W7; rw [Function.update_self]
theorem W9_v6 : W9 m d f1 s (rr main_v6) = b1r m d := by
  unfold W9 b1r; after_results; unfold W7 W6 W1
  rw [Function.update_of_ne (by decide)]; after_results
  rw [Function.update_of_ne (by decide), StableHlo.unary_result_ne (h := by decide)]; rfl
theorem W9_v7 : W9 m d f1 s (rr main_v7) = b2r m d := by
  unfold W9 b2r; after_results; unfold W7 W6 W1
  rw [Function.update_of_ne (by decide)]; after_results
  rw [Function.update_of_ne (by decide), StableHlo.unary_result_ne (h := by decide)]; rfl
/-- A buffer no operation of @main writes and neither region nor the SparseCore call changes keeps its launch contents. -/
theorem W9_keep (b : Ref sig .tc) (h0 : b ≠ main_v0) (h1 : b ≠ main_v1) (h2 : b ≠ main_v2) (hc : b ≠ main_c) (hc0 : b ≠ main_call0_v0)
    (h3 : b ≠ main_v3) (h4 : b ≠ main_v4) (h5 : b ≠ main_v5) (h6 : b ≠ main_v6) (h7 : b ≠ main_v7) :
    W9 m d f1 s (rr b) = m ((TT d).loc b) := by
  unfold W9
  simp only [StableHlo.after_cons, StableHlo.after_nil]
  rw [StableHlo.reshape_result_ne (h := h7), StableHlo.reshape_result_ne (h := h6)]
  unfold W7
  rw [Function.update_of_ne (fun e => h5 (Proc.devRef_injective _ e))]
  unfold W6
  simp only [StableHlo.after_cons, StableHlo.after_nil]
  rw [StableHlo.reshape_result_ne (h := h4), StableHlo.binary_result_ne (h := h3), StableHlo.unary_result_ne (h := hc0),
    StableHlo.nullary_result_ne (h := hc), StableHlo.reshape_result_ne (h := h2)]
  unfold W1
  rw [Function.update_of_ne (fun e => h1 (Proc.devRef_injective _ e)), StableHlo.unary_result_ne (h := h0)]
  rfl

end W9

end Vals

/-! ## @main -/

omit [FloatOps F] [∀ e, Nonempty (Elt F e)] in
theorem G_eq (d : Dev nD) : (G (F := F) d : sProp 𝕄)
    = iprop((Pipeline.cellsGhost (Pipeline.pin (pcfgs (F := F)) adm) EP 0 d ∗ Pipeline.cellsGhost (Pipeline.pin (pcfgs (F := F)) adm) EP 1 d)
      ∗ (Pipeline.toksInit (Pipeline.pin (pcfgs (F := F)) adm) EP 0 d ∗ Pipeline.toksInit (Pipeline.pin (pcfgs (F := F)) adm) EP 1 d)) := by
  unfold G; rw [bigSep_W0, bigSep_W0]

/-- @main on device `d`'s TensorCore. -/
theorem hmain (Rg : Regions m PK) (hfl : ∀ idx : IVec S4096x50 32,
      shapeCast S262144 (pad S4096x64 ![0, 0] ![0, 14] ![0, 0] idx (id (constantI S_ 32 0#32)) Shapes2.Facts₀.pads_S4096x50_S4096x64_000_0140 Shapes2.Facts₀.h_S_)
        Shapes2.Facts₀.shapeCasts_S4096x64_S262144 = Spec.flatOf idx)
    (κ : GSem nD τ sig → ℕ) (d : Dev nD) :
    iprop((K (F := F)).ctx EH (P m PK) κ ∗ (K (F := F)).tcSt EH d 0 ∗ (K (F := F)).tcRes m ρ d ∗ G (F := F) d)
      ⊢ wp frame (wpE ((K (F := F)).defs (D (F := F))) 𝒱 (TT d) none) Set.univ (main d)
          fun _ => iprop((K (F := F)).tcSt EH d 1 ∗ FIN m PK d) := by
  unfold SparseCore.Cfg.tcRes SparseCore.Cfg.tcSt
  rw [(K (F := F)).Otc_end d (le_refl 1)]
  rw [show (fun b : Ref sig .tc => m ((TT d).loc b)) = (fun b => V0 m d (rr b)) from rfl, unscoped_held, G_eq]
  simp only [main, fn_pad.body, wp_bind, wp_pure]
  iintro ⟨#Hctx, ⟨HO, Hst⟩, ⟨Hb, Hheld, -, -⟩, ⟨Hg0, Hg1⟩, ⟨Ht0, Ht1⟩⟩
  ihave Hlv := (SparseCore.Cfg.ctx_levAts κ) $$ Hctx
  -- the transpose
  iapply (wp_hlo_within 𝒱 (TT d) none Set.univ (op := o1) (S := Sall) h1 (V := V0 m d)) $$ [Hb Hheld]
  · isplitl [Hb]; · iexact Hb
    iexact Hheld
  iintro ⟨Hb, Hheld⟩
  rw [wp_ret]; imodintro
  -- region 0: main_v0 and main_v1 leave the held set, the debt leaves the handshake state
  ihave Hh := (Entails.of_eq (held_take (TT d) Sall ((o1 (F := F)).result (V0 m d)) (rr main_v0) (by decide))) $$ Hheld
  icases Hh with ⟨Hv0, Hheld⟩
  ihave Hh := (Entails.of_eq (held_take (TT d) (Sall.erase (rr main_v0)) ((o1 (F := F)).result (V0 m d)) (rr main_v1) (by decide))) $$ Hheld
  icases Hh with ⟨Hv1, Hheld⟩
  rw [V1_v0 m d, V1_v1 m d]
  iapply (wp_region Rg.rd0 Rg.R0 d _) $$ [Hb Hv0 Hv1 HO Hg0 Ht0 Hheld Hst Hg1 Ht1]
  isplitr [Hb Hv0 Hv1 HO Hg0 Ht0]
  · iintro ⟨Hb, Hpost⟩
    ihave Hp := (Rg.post0 d) $$ Hpost
    icases Hp with ⟨Hv0, ⟨%f1, Hv1, %hPK⟩, HO⟩
    ihave Hheld := (Entails.of_eq (held_put (TT d) (Sall.erase (rr main_v0)) ((o1 (F := F)).result (V0 m d)) (rr main_v1) (by decide) f1)) $$ [Hv1 Hheld]
    · isplitl [Hv1] <;> iassumption
    ihave Hheld := (Entails.of_eq (show (held (TT d) (Sall.erase (rr main_v0)) (Function.update ((o1 (F := F)).result (V0 m d)) (rr main_v1) f1) : sProp 𝕄)
        = held (TT d) (Sall.erase (rr main_v0)) (W1 m d f1) from rfl)) $$ Hheld
    ihave Hheld := (Entails.of_eq (held_take (TT d) Sall (W1 m d f1) (rr main_v0) (by decide)).symm) $$ [Hv0 Hheld]
    · rw [W1_v0]; isplitl [Hv0] <;> iassumption
    -- the reshape of the relaid table, the constant, the pad's two operations, the flattening
    iapply (wp_hlo_within 𝒱 (TT d) none Set.univ (op := o2) (S := Sall) h2 (V := W1 m d f1)) $$ [Hb Hheld]
    · isplitl [Hb]; · iexact Hb
      iexact Hheld
    iintro ⟨Hb, Hheld⟩
    rw [wp_ret]; imodintro
    iapply (wp_hlo_within 𝒱 (TT d) none Set.univ (op := o3) (S := Sall) h3) $$ [Hb Hheld]
    · isplitl [Hb]; · iexact Hb
      iexact Hheld
    iintro ⟨Hb, Hheld⟩
    rw [wp_ret]; imodintro
    iapply (wp_hlo_within 𝒱 (TT d) none Set.univ (op := o4) (S := Sall) h4) $$ [Hb Hheld]
    · isplitl [Hb]; · iexact Hb
      iexact Hheld
    iintro ⟨Hb, Hheld⟩
    rw [wp_ret]; imodintro
    iapply (wp_hlo_within 𝒱 (TT d) none Set.univ (op := o5) (S := Sall) h5) $$ [Hb Hheld]
    · isplitl [Hb]; · iexact Hb
      iexact Hheld
    iintro ⟨Hb, Hheld⟩
    rw [wp_ret]; imodintro
    imodintro
    iapply (wp_hlo_within 𝒱 (TT d) none Set.univ (op := o6) (S := Sall) h6) $$ [Hb Hheld]
    · isplitl [Hb]; · iexact Hb
      iexact Hheld
    iintro ⟨Hb, Hheld⟩
    rw [wp_ret]; imodintro
    rw [W6_def]
    -- the SparseCore call: the flat index array, the table and the sums leave the held set
    ihave Hh := (Entails.of_eq (held_take (TT d) Sall (W6 m d f1) (rr main_v4) (by decide))) $$ Hheld
    icases Hh with ⟨Hi, Hheld⟩
    ihave Hh := (Entails.of_eq (held_take (TT d) (Sall.erase (rr main_v4)) (W6 m d f1) (rr main_v2) (by decide))) $$ Hheld
    icases Hh with ⟨Ht, Hheld⟩
    ihave Hh := (Entails.of_eq (held_take (TT d) ((Sall.erase (rr main_v4)).erase (rr main_v2)) (W6 m d f1) (rr main_v5) (by decide))) $$ Hheld
    icases Hh with ⟨Ho, Hheld⟩
    rw [W6_v4 m d hfl f1, W6_v2 m d f1, W6_v5 m d f1]
    ihave Hst0 := (st0_intro m PK d (shapeCast S507904x128 f1 Shapes2.Facts₀.shapeCasts_S31x256x64x128_S507904x128) (m ((TT d).loc main_v5)) hPK) $$ [Hi Ht Ho]
    · isplitl [Hi]; · iexact Hi
      isplitl [Ht] <;> iassumption
    icases Hst0 with ⟨Hrem, Hsts⟩
    iapply ((K (F := F)).wp_run (D (F := F)) 𝒱 (EH := EH) (P := P m PK) κ d 0) $$ [Hsts HO Hst Hrem Hb Hheld Hg1 Ht1]
    isplitr; · iexact Hctx
    isplitl [HO Hst]
    · unfold SparseCore.Cfg.tcSt
      isplitl [HO]; · iexact HO
      iexact Hst
    isplitl [Hsts]; · iexact Hsts
    iintro ⟨Hst, Hdn⟩
    ihave Hd := (dn0_elim m PK d (shapeCast S507904x128 f1 Shapes2.Facts₀.shapeCasts_S31x256x64x128_S507904x128)) $$ [Hrem Hdn]
    · isplitl [Hrem] <;> iassumption
    icases Hd with ⟨Hi, Ht, Ho⟩
    -- back into the held set
    ihave Hheld := (Entails.of_eq (held_put (TT d) ((Sall.erase (rr main_v4)).erase (rr main_v2)) (W6 m d f1) (rr main_v5) (by decide)
        (Spec.bagSums (flatM m d) (shapeCast S507904x128 f1 Shapes2.Facts₀.shapeCasts_S31x256x64x128_S507904x128)))) $$ [Ho Hheld]
    · isplitl [Ho]; · iexact Ho
      iexact Hheld
    ihave Hheld := (Entails.of_eq (held_take (TT d) (Sall.erase (rr main_v4)) (W7 m d f1 (Spec.bagSums (flatM m d) (shapeCast S507904x128 f1 Shapes2.Facts₀.shapeCasts_S31x256x64x128_S507904x128))) (rr main_v2) (by decide)).symm) $$ [Ht Hheld]
    · rw [W7_v2]; isplitl [Ht]; · iexact Ht
      iexact Hheld
    ihave Hheld := (Entails.of_eq (held_take (TT d) Sall (W7 m d f1 (Spec.bagSums (flatM m d) (shapeCast S507904x128 f1 Shapes2.Facts₀.shapeCasts_S31x256x64x128_S507904x128))) (rr main_v4) (by decide)).symm) $$ [Hi Hheld]
    · rw [W7_v4 m d hfl]; isplitl [Hi]; · iexact Hi
      iexact Hheld
    -- the two reshapes of the biases
    iapply (wp_hlo_within 𝒱 (TT d) none Set.univ (op := o7) (S := Sall) h7) $$ [Hb Hheld]
    · isplitl [Hb]; · iexact Hb
      iexact Hheld
    iintro ⟨Hb, Hheld⟩
    rw [wp_ret]; imodintro
    iapply (wp_hlo_within 𝒱 (TT d) none Set.univ (op := o8) (S := Sall) h8) $$ [Hb Hheld]
    · isplitl [Hb]; · iexact Hb
      iexact Hheld
    iintro ⟨Hb, Hheld⟩
    rw [wp_ret]; imodintro
    rw [W9_def]
    -- region 1: its six arrays leave the held set, the debt (none after the only SparseCore call) leaves the handshake state
    ihave Hh := (Entails.of_eq (held_take (TT d) Sall (W9 m d f1 (Spec.bagSums (flatM m d) (shapeCast S507904x128 f1 Shapes2.Facts₀.shapeCasts_S31x256x64x128_S507904x128))) (rr main_v5) (by decide))) $$ Hheld
    icases Hh with ⟨H_main_v5, Hheld⟩
    ihave Hh := (Entails.of_eq (held_take (TT d) (Sall.erase (rr main_v5)) (W9 m d f1 (Spec.bagSums (flatM m d) (shapeCast S507904x128 f1 Shapes2.Facts₀.shapeCasts_S31x256x64x128_S507904x128))) (rr main_arg2) (by decide))) $$ Hheld
    icases Hh with ⟨H_main_arg2, Hheld⟩
    ihave Hh := (Entails.of_eq (held_take (TT d) ((Sall.erase (rr main_v5)).erase (rr main_arg2)) (W9 m d f1 (Spec.bagSums (flatM m d) (shapeCast S507904x128 f1 Shapes2.Facts₀.shapeCasts_S31x256x64x128_S507904x128))) (rr main_v6) (by decide))) $$ Hheld
    icases Hh with ⟨H_main_v6, Hheld⟩
    ihave Hh := (Entails.of_eq (held_take (TT d) (((Sall.erase (rr main_v5)).erase (rr main_arg2)).erase (rr main_v6)) (W9 m d f1 (Spec.bagSums (flatM m d) (shapeCast S507904x128 f1 Shapes2.Facts₀.shapeCasts_S31x256x64x128_S507904x128))) (rr main_arg4) (by decide))) $$ Hheld
    icases Hh with ⟨H_main_arg4, Hheld⟩
    ihave Hh := (Entails.of_eq (held_take (TT d) ((((Sall.erase (rr main_v5)).erase (rr main_arg2)).erase (rr main_v6)).erase (rr main_arg4)) (W9 m d f1 (Spec.bagSums (flatM m d) (shapeCast S507904x128 f1 Shapes2.Facts₀.shapeCasts_S31x256x64x128_S507904x128))) (rr main_v7) (by decide))) $$ Hheld
    icases Hh with ⟨H_main_v7, Hheld⟩
    ihave Hh := (Entails.of_eq (held_take (TT d) (((((Sall.erase (rr main_v5)).erase (rr main_arg2)).erase (rr main_v6)).erase (rr main_arg4)).erase (rr main_v7)) (W9 m d f1 (Spec.bagSums (flatM m d) (shapeCast S507904x128 f1 Shapes2.Facts₀.shapeCasts_S31x256x64x128_S507904x128))) (rr main_v8) (by decide))) $$ Hheld
    icases Hh with ⟨H_main_v8, Hheld⟩
    rw [W9_v5, W9_v6, W9_v7, W9_keep m d f1 _ main_arg2 (by decide) (by decide) (by decide) (by decide) (by decide) (by decide) (by decide) (by decide) (by decide) (by decide), W9_keep m d f1 _ main_arg4 (by decide) (by decide) (by decide) (by decide) (by decide) (by decide) (by decide) (by decide) (by decide) (by decide),
      W9_keep m d f1 _ main_v8 (by decide) (by decide) (by decide) (by decide) (by decide) (by decide) (by decide) (by decide) (by decide) (by decide)]
    unfold SparseCore.Cfg.tcSt
    icases Hst with ⟨HO, Hst⟩
    rw [(K (F := F)).Otc_end d (show 1 ≤ ((0 : Fin 1).val + 1) from le_rfl)]
    iapply (wp_region (Rg.rd1 (shapeCast S507904x128 f1 Shapes2.Facts₀.shapeCasts_S31x256x64x128_S507904x128)) (Rg.R1 (shapeCast S507904x128 f1 Shapes2.Facts₀.shapeCasts_S31x256x64x128_S507904x128)) d _) $$ [Hb H_main_v5 H_main_arg2 H_main_v6 H_main_arg4 H_main_v7 H_main_v8 HO Hg1 Ht1 Hheld Hst]
    isplitr [Hb H_main_v5 H_main_arg2 H_main_v6 H_main_arg4 H_main_v7 H_main_v8 HO Hg1 Ht1]
    · iintro ⟨Hb, Hpost⟩
      ihave Hp := (Rg.post1 (shapeCast S507904x128 f1 Shapes2.Facts₀.shapeCasts_S31x256x64x128_S507904x128) d) $$ Hpost
      icases Hp with ⟨H_main_v5, H_main_arg2, H_main_v6, H_main_arg4, H_main_v7, H_main_v8, HO⟩
      -- what @main leaves the claim
      ihave Hh := (Entails.of_eq (held_take (TT d) ((((((Sall.erase (rr main_v5)).erase (rr main_arg2)).erase (rr main_v6)).erase (rr main_arg4)).erase (rr main_v7)).erase (rr main_v8)) (W9 m d f1 (Spec.bagSums (flatM m d) (shapeCast S507904x128 f1 Shapes2.Facts₀.shapeCasts_S31x256x64x128_S507904x128))) (rr main_arg0) (by decide))) $$ Hheld
      icases Hh with ⟨H_main_arg0, Hheld⟩
      ihave Hh := (Entails.of_eq (held_take (TT d) (((((((Sall.erase (rr main_v5)).erase (rr main_arg2)).erase (rr main_v6)).erase (rr main_arg4)).erase (rr main_v7)).erase (rr main_v8)).erase (rr main_arg0)) (W9 m d f1 (Spec.bagSums (flatM m d) (shapeCast S507904x128 f1 Shapes2.Facts₀.shapeCasts_S31x256x64x128_S507904x128))) (rr main_arg1) (by decide))) $$ Hheld
      icases Hh with ⟨H_main_arg1, Hheld⟩
      ihave Hh := (Entails.of_eq (held_take (TT d) ((((((((Sall.erase (rr main_v5)).erase (rr main_arg2)).erase (rr main_v6)).erase (rr main_arg4)).erase (rr main_v7)).erase (rr main_v8)).erase (rr main_arg0)).erase (rr main_arg1)) (W9 m d f1 (Spec.bagSums (flatM m d) (shapeCast S507904x128 f1 Shapes2.Facts₀.shapeCasts_S31x256x64x128_S507904x128))) (rr main_arg3) (by decide))) $$ Hheld
      icases Hh with ⟨H_main_arg3, Hheld⟩
      ihave Hh := (Entails.of_eq (held_take (TT d) (((((((((Sall.erase (rr main_v5)).erase (rr main_arg2)).erase (rr main_v6)).erase (rr main_arg4)).erase (rr main_v7)).erase (rr main_v8)).erase (rr main_arg0)).erase (rr main_arg1)).erase (rr main_arg3)) (W9 m d f1 (Spec.bagSums (flatM m d) (shapeCast S507904x128 f1 Shapes2.Facts₀.shapeCasts_S31x256x64x128_S507904x128))) (rr main_arg5) (by decide))) $$ Hheld
      icases Hh with ⟨H_main_arg5, Hheld⟩
      rw [W9_keep m d f1 _ main_arg0 (by decide) (by decide) (by decide) (by decide) (by decide) (by decide) (by decide) (by decide) (by decide) (by decide), W9_keep m d f1 _ main_arg1 (by decide) (by decide) (by decide) (by decide) (by decide) (by decide) (by decide) (by decide) (by decide) (by decide), W9_keep m d f1 _ main_arg3 (by decide) (by decide) (by decide) (by decide) (by decide) (by decide) (by decide) (by decide) (by decide) (by decide),
        W9_keep m d f1 _ main_arg5 (by decide) (by decide) (by decide) (by decide) (by decide) (by decide) (by decide) (by decide) (by decide) (by decide)]
      imodintro
      isplitl [HO Hst]
      · isplitl [HO]; · iexact HO
        iexact Hst
      unfold FIN
      isplitl [H_main_arg0]; · iexact H_main_arg0
      isplitl [H_main_arg1]; · iexact H_main_arg1
      isplitl [H_main_arg2]; · iexact H_main_arg2
      isplitl [H_main_arg3]; · iexact H_main_arg3
      isplitl [H_main_arg4]; · iexact H_main_arg4
      isplitl [H_main_arg5]; · iexact H_main_arg5
      iexists (shapeCast S507904x128 f1 Shapes2.Facts₀.shapeCasts_S31x256x64x128_S507904x128)
      isplitr; · ipureintro; exact hPK
      iexact H_main_v8
    isplitl [Hb]; · iexact Hb
    isplitl [H_main_v5 H_main_arg2 H_main_v6 H_main_arg4 H_main_v7 H_main_v8 HO]
    · iapply (Rg.pre1 (shapeCast S507904x128 f1 Shapes2.Facts₀.shapeCasts_S31x256x64x128_S507904x128) d)
      isplitl [H_main_v5]; · iexact H_main_v5
      isplitl [H_main_arg2]; · iexact H_main_arg2
      isplitl [H_main_v6]; · iexact H_main_v6
      isplitl [H_main_arg4]; · iexact H_main_arg4
      isplitl [H_main_v7]; · iexact H_main_v7
      isplitl [H_main_v8]; · iexact H_main_v8
      iexact HO
    isplitr; · iexact Hlv
    isplitl [Hg1] <;> iassumption
  isplitl [Hb]; · iexact Hb
  isplitl [Hv0 Hv1 HO]
  · iapply (Rg.pre0 d)
    isplitl [Hv0]; · iexact Hv0
    isplitl [Hv1]; · iexact Hv1
    iexact HO
  isplitr; · iexact Hlv
  isplitl [Hg0] <;> iassumption

/-! ## What the TensorCores' final assertions say of the final memory -/

/-- Device `d`'s part of the claim read off a final state: the six arguments unchanged, the result at `OUT` of a table of
    which `PK` holds. -/
def fq (d : Dev nD) (s' : Phys nD τ sig (Elt F)) : Prop :=
  (s'.mem.mem ((TT d).loc main_arg0) = m ((TT d).loc main_arg0) ∧ s'.mem.mem ((TT d).loc main_arg1) = m ((TT d).loc main_arg1)
    ∧ s'.mem.mem ((TT d).loc main_arg2) = m ((TT d).loc main_arg2) ∧ s'.mem.mem ((TT d).loc main_arg3) = m ((TT d).loc main_arg3)
    ∧ s'.mem.mem ((TT d).loc main_arg4) = m ((TT d).loc main_arg4) ∧ s'.mem.mem ((TT d).loc main_arg5) = m ((TT d).loc main_arg5))
  ∧ ∃ tab : FVec F Spec.STab .f32, PK tab ∧ s'.mem.mem ((TT d).loc main_v8) = OUT m d tab

theorem hfin (d : Dev nD) (s' : Phys nD τ sig (Elt F)) : iprop(FIN m PK d ∗ SI s') ⊢ (⌜fq m PK d s'⌝ : sProp 𝕄) := by
  unfold FIN
  iintro ⟨⟨H0, H1, H2, H3, H4, H5, %tab, %hP, H8⟩, HSI⟩
  ihave H := (persistent_entails_right (SI_pointsTo_agree (st := s') (ℓ := (TT d).loc main_arg0) (I := Finset.univ) (q := fullShare) (f := m ((TT d).loc main_arg0)))) $$ [HSI H0]
  · isplitl [HSI] <;> iassumption
  icases H with ⟨%h0, HSI, -⟩
  ihave H := (persistent_entails_right (SI_pointsTo_agree (st := s') (ℓ := (TT d).loc main_arg1) (I := Finset.univ) (q := fullShare) (f := m ((TT d).loc main_arg1)))) $$ [HSI H1]
  · isplitl [HSI] <;> iassumption
  icases H with ⟨%h1, HSI, -⟩
  ihave H := (persistent_entails_right (SI_pointsTo_agree (st := s') (ℓ := (TT d).loc main_arg2) (I := Finset.univ) (q := fullShare) (f := m ((TT d).loc main_arg2)))) $$ [HSI H2]
  · isplitl [HSI] <;> iassumption
  icases H with ⟨%h2, HSI, -⟩
  ihave H := (persistent_entails_right (SI_pointsTo_agree (st := s') (ℓ := (TT d).loc main_arg3) (I := Finset.univ) (q := fullShare) (f := m ((TT d).loc main_arg3)))) $$ [HSI H3]
  · isplitl [HSI] <;> iassumption
  icases H with ⟨%h3, HSI, -⟩
  ihave H := (persistent_entails_right (SI_pointsTo_agree (st := s') (ℓ := (TT d).loc main_arg4) (I := Finset.univ) (q := fullShare) (f := m ((TT d).loc main_arg4)))) $$ [HSI H4]
  · isplitl [HSI] <;> iassumption
  icases H with ⟨%h4, HSI, -⟩
  ihave H := (persistent_entails_right (SI_pointsTo_agree (st := s') (ℓ := (TT d).loc main_arg5) (I := Finset.univ) (q := fullShare) (f := m ((TT d).loc main_arg5)))) $$ [HSI H5]
  · isplitl [HSI] <;> iassumption
  icases H with ⟨%h5, HSI, -⟩
  ihave H := (SI_pointsTo_agree (st := s') (ℓ := (TT d).loc main_v8) (I := Finset.univ) (q := fullShare) (f := OUT m d tab)) $$ [HSI H8]
  · isplitl [HSI] <;> iassumption
  icases H with %h8
  ipureintro
  exact ⟨⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i)⟩,
    tab, hP, funext fun i => h8 i (Finset.mem_univ i)⟩

/-! ## The program's run -/

/-- What every final state satisfies: on each device the arguments unchanged and the result at `OUT` of a table of which `PK` holds. -/
def QC : PUnit × MemSt nD τ sig (Elt F) → Prop := fun r => ∀ c : Dev nD,
  (r.2.mem ((TT c).loc main_arg0) = m ((TT c).loc main_arg0) ∧ r.2.mem ((TT c).loc main_arg1) = m ((TT c).loc main_arg1)
    ∧ r.2.mem ((TT c).loc main_arg2) = m ((TT c).loc main_arg2) ∧ r.2.mem ((TT c).loc main_arg3) = m ((TT c).loc main_arg3)
    ∧ r.2.mem ((TT c).loc main_arg4) = m ((TT c).loc main_arg4) ∧ r.2.mem ((TT c).loc main_arg5) = m ((TT c).loc main_arg5))
  ∧ ∃ tab : FVec F Spec.STab .f32, PK tab ∧ r.2.mem ((TT c).loc main_v8) = OUT m c tab

/-- The run of the whole program: the launch theorem at one vector-subcore call, from the tile's obligation, the split of a
    SparseCore's operands among its tiles, @main with its two regions, and the launch element. -/
theorem run_main (Rg : Regions m PK) (hfl : ∀ idx : IVec S4096x50 32,
      shapeCast S262144 (pad S4096x64 ![0, 0] ![0, 14] ![0, 0] idx (id (constantI S_ 32 0#32)) Shapes2.Facts₀.pads_S4096x50_S4096x64_000_0140 Shapes2.Facts₀.h_S_)
        Shapes2.Facts₀.shapeCasts_S4096x64_S262144 = Spec.flatOf idx)
    (htile : (K (F := F)).TileObl (D (F := F)) 𝒱 (P m PK) v₀ 0) :
    θ_run (Cert.Kernel.defs (F := F)) (Cert.Kernel.threads (F := F)) ⟨m, fun _ => 0, ρ⟩ (QC m PK) :=
  SparseCore.Cfg.θ_run_sc (K := K (F := F)) (D := D (F := F)) (𝒱 := 𝒱) (EH := EH) (P := P m PK) facts v₀
    (fun q hq => match q with | 0 => nomatch hq)
    (fun q _ => match q with | 0 => htile)
    (fun q _ => match q with | 0 => SparseCore.Cfg.VecSplit.of_plain (vecSplit m PK))
    m ρ main (G (F := F)) (FIN m PK) (u₀ (F := F)) (sep_elim_left.trans (hu₀ m PK)) (hmain m ρ PK Rg hfl) (fq m PK) (hfin m PK) (QC m PK) (fun _ h => h)

end Cert.Proof.BagB
end
-- ==== Proof.PackBodyB.lean ====
/-
  The kernel body of the packing call, run once at symbolic operands: from the input staging buffer at contents
  `f0` and the output staging buffer at anything, the body (one whole load, the transposing product with the
  identity, 512 stores of 64 x 64 pieces) returns with the input buffer as it was and the output buffer at
  contents that are a term over `f0` alone.
-/
import proofs.«203835_g19404662243951_cont_8to1_399_35_alg».proof.Proof.Gen.Kernel.Skeleton
import Idealize.ShloMosaic.Lib.Tactic

noncomputable section

namespace Cert.Proof.PackB
open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What the body leaves in the output staging buffer, a term over the input staging buffer's contents, with the
    proof that the body runs to its return from the two buffers held whole, handing the input back as it was and
    the output at that term. -/
noncomputable def packRun (c : Dev nD) (i : grid0.Coords)
    (M0 : Memref sig .tc .vmem S64x32768 .f32) (h0 : M0.IsWhole) (M1 : Memref sig .tc .vmem S1x256x64x128 .f32) (h1 : M1.IsWhole)
    (f0 : Bf (F := F) c M0) :
    { W : Bf (F := F) c M1 //
      ∀ (f1 : Bf (F := F) c M1) (E : Set Name) (Q : PUnit → sProp 𝕄),
        iprop(pt c M0 f0 ∗ pt c M1 f1 ∗ (iprop(pt c M0 f0 ∗ pt c M1 W) -∗ Q ⟨⟩))
        ⊢ wp frame (wpE (defs₀ (F := F)) Variants.none c none) E (cc0__pack_body i M0 h0 M1 h1) Q } := by
  refine ⟨?_, fun f1 E Q => ?run⟩
  case run =>
    iintro ⟨H0, H1, Hk⟩
    sl_exec_parts!
    sl_step
    iapply Hk
    isplitl [H0]; · iexact H0
    iexact H1

end Cert.Proof.PackB
end
-- ==== Proof.PackDataB.lean ====
/-
  The proof data of the packing pipeline on one core: the entry contents of its two arrays (the transposed
  embeddings, read block by block; the relaid table, written block by block), what the body may leave in each
  staging buffer — the input's as it found it; the output's at what the body's stores make of SOME fetched input
  block, its columns past the array's end at anything —, the invariant (the scoped buffers no window of this
  pipeline stages), full shares, a constant debt, and the waits recorded so far bounded in level.
-/
import proofs.«203835_g19404662243951_cont_8to1_399_35_alg».proof.Proof.PackBodyB
import proofs.«203835_g19404662243951_cont_8to1_399_35_alg».proof.Proof.SetupB
import proofs.«203835_g19404662243951_cont_8to1_399_35_alg».proof.Proof.Gen.Kernel.Launch
import proofs.«203835_g19404662243951_cont_8to1_399_35_alg».proof.Proof.Gen.Kernel.Points

noncomputable section

namespace Cert.Proof.PackB
open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ BagB.UU ℕ

/-- What the input staging buffer holds once the fetch at point `t` has landed in a buffer that held `d`: the
    block of the array inside the array, `d` on the columns past its end. -/
def fetched0 (c : Dev nD) (a0 : Buf (Elt F) ((c : Thread nD τ).loc main_v0)) (t : Fin cfg0.N)
    (d : (cfg0.win 0).block.Idx → Elt F (cfg0.win 0).elt) : (cfg0.win 0).block.Idx → Elt F (cfg0.win 0).elt :=
  (cfg0.win 0).fill (cfg0.grid.coords t) d (((cfg0.win 0).blk t).view.read (Elt F) a0)

/-- What the body may leave in the output staging buffer at point `t`: what its stores make of the input staging
    buffer at some fetched contents, read through some whole staging memrefs. -/
def OutOK (c : Dev nD) (a0 : Buf (Elt F) ((c : Thread nD τ).loc main_v0)) (t : Fin cfg0.N)
    (X : (cfg0.win 1).block.Idx → Elt F (cfg0.win 1).elt) : Prop :=
  ∃ (d : (cfg0.win 0).block.Idx → Elt F (cfg0.win 0).elt)
    (M0 : Memref sig .tc .vmem S64x32768 .f32) (h0 : M0.IsWhole)
    (M1 : Memref sig .tc .vmem S1x256x64x128 .f32) (h1 : M1.IsWhole) (f0 : Bf (F := F) c M0),
    M0.view.read (Elt F) f0 = fetched0 c a0 t d ∧
    X = M1.view.read (Elt F)
      (packRun (Ix := HIx 1) (Name := ℕ) (U := BagB.UU) (Lvl := ℕ) c (grid0.coords t) M0 h0 M1 h1 f0).1

/-- The proof data of the packing pipeline on core `c`. -/
def rdat0 (c : Dev nD) (a0 : Buf (Elt F) ((c : Thread nD τ).loc main_v0)) (a1 : Buf (Elt F) ((c : Thread nD τ).loc main_v1))
    (O : CellTallies nD τ sig (HIx 1)) (b : ℕ) : RDat τ (Elt F) (HIx 1) ℕ BagB.UU ℕ cfg0 c where
  A w := match w with
    | ⟨0, _⟩ => a0
    | ⟨1, _⟩ => a1
  after w t Y X := match w with
    | ⟨0, _⟩ => X = Y
    | ⟨1, _⟩ => OutOK c a0 t X
  Φ _ := Pipeline.scopedRest (Ix := HIx 1) (Name := ℕ) (U := BagB.UU) (Lvl := ℕ) (Val := Elt F) spec0 c
  q _ := fullShare
  owed _ := O
  recorded _ := {p | (BagB.K (F := F)).lev ((c : Thread nD τ), p.1) p.2 ≤ b}

variable (c : Dev nD) (a0 : Buf (Elt F) ((c : Thread nD τ).loc main_v0)) (a1 : Buf (Elt F) ((c : Thread nD τ).loc main_v1))
  (O : CellTallies nD τ sig (HIx 1)) (b : ℕ)

theorem rdat0_A0 : (rdat0 c a0 a1 O b).A 0 = a0 := rfl
theorem rdat0_A1 : (rdat0 c a0 a1 O b).A 1 = a1 := rfl
theorem rdat0_owed (t) : (rdat0 c a0 a1 O b).owed t = O := rfl
theorem rdat0_recorded (t) : (rdat0 c a0 a1 O b).recorded t = {p | (BagB.K (F := F)).lev ((c : Thread nD τ), p.1) p.2 ≤ b} := rfl
theorem rdat0_share (w) : (rdat0 c a0 a1 O b).share w = fullShare := by
  unfold RDat.share; split <;> rfl

/-- The input's staging buffer, just fetched at every point, holds the array's block and anything past its end. -/
theorem finds0 (t : Fin cfg0.N) (Y : (cfg0.win 0).block.Idx → Elt F (cfg0.win 0).elt) :
    (rdat0 c a0 a1 O b).Finds 0 t Y ↔ ∃ d, Y = fetched0 c a0 t d := by
  rw [RDat.finds_of_fetch _ (fetch0_0 t)]; rfl

end Cert.Proof.PackB
end
-- ==== Proof.PackB.lean ====
/-
  The packing call as a region of @main: the body obligation of its proof data at every point, the wait evidence
  for its staging cells under the debt the core carries through the region, and the entry and exit entailments
  around the thread states
    pre  = the transposed embeddings and the relaid table at their entry contents, and the core's debt;
    post = the transposed embeddings as they were, the relaid table at contents satisfying the predicate `PK`,
           and the core's debt.
-/
import proofs.«203835_g19404662243951_cont_8to1_399_35_alg».proof.Proof.PackDataB
import Idealize.ShloMosaic.Lib.Pipeline.Regions
import Idealize.ShloMosaic.Lib.Tactic

noncomputable section

namespace Cert.Proof.PackB
open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window pin)

variable {F : FTy → Type} [FloatOps F]

local notation "𝕄" => MT nD τ sig (HIx 1) (Elt F) ℕ BagB.UU ℕ

/-- The invariant between points: the scoped buffers this pipeline does not stage. -/
theorem rdat0_Φ (c : Dev nD) (a0 : Buf (Elt F) ((c : Thread nD τ).loc main_v0)) (a1 : Buf (Elt F) ((c : Thread nD τ).loc main_v1))
    (O : CellTallies nD τ sig (HIx 1)) (b : ℕ) (t) : (rdat0 c a0 a1 O b).Φ t
    = Pipeline.scopedRest (Ix := HIx 1) (Name := ℕ) (U := BagB.UU) (Lvl := ℕ) (Val := Elt F) spec0 c := rfl

/-- The pipelines' admissible tables: none prefetches anything. -/
abbrev adm : (p : Fin 2) → (pcfgs (F := F) p).Adm := fun p => (cfgs p).toPCfg_adm

/-- A whole memref owned at contents `X` is its buffer's points-to at contents that read `X`. -/
theorem owns_of_isWhole (c : Thread nD τ) {sp : Space} {sh : Shape} {e : EltTy} {m : Memref sig c.2.kind sp sh e}
    (hw : m.IsWhole) (q : PosShare TreeShare) (X : sh.Idx → Elt F e) :
    (owns c m q X : sProp 𝕄) = iprop(∃ f : Buf (Elt F) (m.view.loc c), ⌜m.view.read (Elt F) f = X⌝ ∗ (m.view.loc c ↦{q} f)) := by
  unfold owns; rw [hw.set_eq_univ]

variable (c : Dev nD) (a0 : Buf (Elt F) ((c : Thread nD τ).loc main_v0)) (a1 : Buf (Elt F) ((c : Thread nD τ).loc main_v1))
  (O : CellTallies nD τ sig (HIx 1)) (b : ℕ)

/-- The two arrays at contents they may hold after the write-backs below `n`, one by one. -/
theorem arraysAt0_eq (n : ℕ) :
    ((rdat0 c a0 a1 O b).arraysAt n : sProp 𝕄)
      = iprop((∃ G, ⌜(rdat0 c a0 a1 O b).ArrAt 0 n G⌝ ∗ ((c : Thread nD τ).loc main_v0 ↦{fullShare} G))
          ∗ (∃ G, ⌜(rdat0 c a0 a1 O b).ArrAt 1 n G⌝ ∗ ((c : Thread nD τ).loc main_v1 ↦{fullShare} G))) := by
  unfold RDat.arraysAt; rw [Gen.bigSep_W0]
  have e0 : ∀ G, (((cfg0.win 0).arr.view.loc (c : Thread nD τ)) ↦[(cfg0.win 0).arr.view.set]{(rdat0 c a0 a1 O b).share 0} G : sProp 𝕄)
      = ((c : Thread nD τ).loc main_v0 ↦{fullShare} G) := fun G => by
    rw [rdat0_share, (arr_whole0 0).set_eq_univ]
  have e1 : ∀ G, (((cfg0.win 1).arr.view.loc (c : Thread nD τ)) ↦[(cfg0.win 1).arr.view.set]{(rdat0 c a0 a1 O b).share 1} G : sProp 𝕄)
      = ((c : Thread nD τ).loc main_v1 ↦{fullShare} G) := fun G => by
    rw [rdat0_share, (arr_whole0 1).set_eq_univ]
  simp only [e0, e1]

/-! ## The body obligation -/

set_option maxRecDepth 8192 in
/-- At every point: from the invariant, the core's debt and the two current staging buffers — the input's at a
    fetched block, the output's at anything — the body runs to the same invariant and debt, the input's buffer as it
    was and the output's at what its stores make of that block. -/
theorem body : (rdat0 c a0 a1 O b).BodyObligation (defs₀ (F := F)) BagB.𝒱₀ (none : HIx 1) Set.univ := by
  intro t Y hY
  obtain ⟨d, hd⟩ := (finds0 c a0 a1 O b t (Y 0)).mp (hY 0)
  rw [Gen.bigSep_W0, Gen.bigSep_W0, rdat0_Φ, rdat0_Φ]
  have hw0 : ((cfg0.win 0).stage (cfg0.slots t 0)).IsWhole := stage_whole0 0 _
  have hw1 : ((cfg0.win 1).stage (cfg0.slots t 1)).IsWhole := stage_whole0 1 _
  rw [owns_of_isWhole (c : Thread nD τ) hw0, owns_of_isWhole (c : Thread nD τ) hw1]
  iintro ⟨HΦ, Howes, ⟨%f0, %hf0, H0⟩, ⟨%f1, %hf1, H1⟩⟩
  iapply ((packRun (Ix := HIx 1) (Name := ℕ) (U := BagB.UU) (Lvl := ℕ) c (grid0.coords t) (win0_0.stage (cfg0.slots t 0))
    (hstage0_0 ((cfg0.slots t 0).cast nbuf0_0)) (win0_1.stage (cfg0.slots t 1)) (hstage0_1 ((cfg0.slots t 1).cast nbuf0_1)) f0).2 f1 Set.univ _)
  isplitl [H0]; · iexact H0
  isplitl [H1]; · iexact H1
  iintro ⟨H0, H1⟩
  isplitl [HΦ]; · iexact HΦ
  isplitl [Howes]; · iexact Howes
  isplitl [H0]
  · iexists (Y 0); isplitr
    · ipureintro; exact (rfl : Y 0 = Y 0)
    rw [owns_of_isWhole (c : Thread nD τ) hw0]
    iexists f0; isplitr; · ipureintro; exact hf0
    iexact H0
  · iexists _; isplitr
    · ipureintro
      exact ⟨d, _, hstage0_0 ((cfg0.slots t 0).cast nbuf0_0), _, hstage0_1 ((cfg0.slots t 1).cast nbuf0_1), f0, hf0.trans hd, rfl⟩
    rw [owns_of_isWhole (c : Thread nD τ) hw1]
    iexists _; isplitr; · ipureintro; rfl
    iexact H1

/-! ## The region -/

/-- The relaid table's two shapes hold the same elements. -/
theorem hcast : S31x256x64x128.ShapeCasts Spec.STab := by decide

/-- The relaid table's buffer read as the rank-2 table. -/
abbrev asTab (c : Dev nD) (f : Buf (Elt F) ((c : Thread nD τ).loc main_v1)) : FVec F Spec.STab .f32 :=
  shapeCast Spec.STab (f : S31x256x64x128.Idx → Elt F .f32) hcast

section Region

variable (rdats : (p : Fin 2) → (c : Dev nD) → RDat τ (Elt F) (HIx 1) ℕ BagB.UU ℕ (pin (pcfgs (F := F)) adm p) c)
  (A0 : (c : Dev nD) → Buf (Elt F) ((c : Thread nD τ).loc main_v0)) (A1 : (c : Dev nD) → Buf (Elt F) ((c : Thread nD τ).loc main_v1))
  (Ow : Dev nD → CellTallies nD τ sig (HIx 1)) (bw : ℕ)
  (hr : ∀ c, rdats 0 c = rdat0 c (A0 c) (A1 c) (Ow c) bw)
  (hO : ∀ c g, Ow c g none = 0)
  (PK : FVec F Spec.STab .f32 → Prop)
  (hPK : ∀ c f, (rdat0 c (A0 c) (A1 c) (Ow c) bw).ArrAt 1 cfg0.N f → PK (asTab c f))

/-- The thread state the region is entered from: the two arrays at their entry contents and the core's debt, its
    recorded waits at or below level `bw`. -/
def pre0 (c : Dev nD) : sProp 𝕄 :=
  iprop(((c : Thread nD τ).loc main_v0 ↦{fullShare} A0 c) ∗ ((c : Thread nD τ).loc main_v1 ↦{fullShare} A1 c)
    ∗ ∃ W, ⌜(BagB.K (F := F)).WBelow (c : Thread nD τ) W bw⌝ ∗ owes (c : Thread nD τ) (Ow c) W)

/-- The thread state it leaves: the transposed embeddings as they were, the relaid table at contents satisfying `PK`, the debt. -/
def post0 (c : Dev nD) : sProp 𝕄 :=
  iprop(((c : Thread nD τ).loc main_v0 ↦{fullShare} A0 c)
    ∗ (∃ f : Buf (Elt F) ((c : Thread nD τ).loc main_v1), ((c : Thread nD τ).loc main_v1 ↦{fullShare} f) ∗ ⌜PK (asTab c f)⌝)
    ∗ ∃ W, ⌜(BagB.K (F := F)).WBelow (c : Thread nD τ) W bw⌝ ∗ owes (c : Thread nD τ) (Ow c) W)

include hr in
theorem share0 (c : Dev nD) (w : Fin (pin (pcfgs (F := F)) adm 0).W) : (rdats 0 c).share w = fullShare := by
  rw [hr c]; exact rdat0_share c (A0 c) (A1 c) (Ow c) bw w

theorem arr_whole (w : Fin (pin (pcfgs (F := F)) adm 0).W) : ((pin (pcfgs (F := F)) adm 0).spec w).arr.IsWhole := arr_whole0 w

include hr in
/-- The two arrays at contents `F`, one by one. -/
theorem arrays0_eq (c : Dev nD) (G : (w : Fin (pin (pcfgs (F := F)) adm 0).W) → Buf (Elt F) (((pin (pcfgs (F := F)) adm 0).spec w).arr.view.loc (c : Thread nD τ))) :
    ((rdats 0 c).arrays G : sProp 𝕄) = iprop(((c : Thread nD τ).loc main_v0 ↦{fullShare} G 0) ∗ ((c : Thread nD τ).loc main_v1 ↦{fullShare} G 1)) := by
  rw [Pipeline.RDat.arrays_eq pcfgs adm rdats 0 c arr_whole (share0 rdats A0 A1 Ow bw hr c) G]
  exact Gen.bigSep_W0 _

/-- The region record of the packing call. -/
def R0 : Pipeline.RDat.RegionSeg (pcfgs (F := F)) adm rdats (none : HIx 1) (defs₀ (F := F)) BagB.𝒱₀ (BagB.K (F := F)).L (BagB.K (F := F)).lev 0 where
  win := winFacts0.to₀
  block_pos := block_pos0
  stage_whole := stage_whole0
  K := PEmpty
  osem := fun k => k.elim
  ho := Pipeline.OwnSemFacts.none _
  hbody c := by rw [hr c]; exact body c (A0 c) (A1 c) (Ow c) bw
  hwaits c := Pipeline.RDat.cellsWaits_intro (pin (pcfgs (F := F)) adm) rdats (none : HIx 1) 0 c fun w s t => by
    rw [hr c]; exact (BagB.K (F := F)).mayWait_none _ (hO c)
  pre := pre0 A0 A1 Ow bw
  post := post0 A0 Ow bw PK
  X _ := iprop(emp)
  Y _ := iprop(emp)
  Z _ := iprop(emp)
  hentry c := by
    rw [arrays0_eq rdats A0 A1 Ow bw hr c, hr c]
    unfold pre0
    iintro ⟨⟨H0, H1, %W, %hW, Ho⟩, -, -⟩
    imodintro
    isplitl [H0 H1]
    · isplitl [H0]; · iexact H0
      iexact H1
    isplitr
    · unfold Pipeline.prefHeld; rw [show (Finset.univ : Finset (Fin 0)) = ∅ from rfl, BI.bigSep_empty]; iempintro
    isplitl [Ho]
    · iexists W; isplitr
      · ipureintro; exact fun p hp => Or.inl (hW p (Finset.mem_coe.mp hp))
      iexact Ho
    isplitr <;> iempintro
  hin c := by
    rw [hr c, rdat0_Φ]
    iintro ⟨-, -, H⟩; iexact H
  hout c := by
    rw [hr c, rdat0_Φ]
    iintro H
    isplitr; · iempintro
    isplitr
    · unfold Pipeline.ownSems0; rw [show (Finset.univ : Finset PEmpty) = ∅ from rfl, BI.bigSep_empty]; iempintro
    iexact H
  hexit c := by
    rw [hr c]
    rw [arraysAt0_eq]
    unfold post0
    iintro ⟨⟨⟨%G0, %hG0, H0⟩, ⟨%G1, %hG1, H1⟩⟩, ⟨%W, %hW, Ho⟩, -, -⟩
    imodintro
    rw [Pipeline.RDat.ArrAt_in (rdat0 c (A0 c) (A1 c) (Ow c) bw) (0 : Fin cfg0.W) rfl] at hG0
    have hG0' : G0 = A0 c := hG0
    subst hG0'
    isplitl [H0]; · iexact H0
    isplitl [H1]
    · iexists G1; isplitl [H1]; · iexact H1
      ipureintro; exact hPK c G1 hG1
    iexists W; isplitr
    · ipureintro
      intro p hp
      rcases hW (Finset.mem_coe.mpr hp) with h | ⟨w, s, rfl⟩
      · exact h
      · exact Nat.zero_le _
    iexact Ho

end Region

end Cert.Proof.PackB
end
-- ==== Proof.FfnnBodyB.lean ====
/-
  Region 1's body obligation: the feed-forward head's body, at any point of its pipeline, on the proof data of
  `FfnnData`. The body loads its five operand blocks whole, computes the head of the block of sums and stores it whole
  over the result's staging buffer: one triple over arbitrary whole staging memrefs, applied at the point's buffers.
-/
import proofs.«203835_g19404662243951_cont_8to1_399_35_alg».proof.Proof.FfnnDataB
import proofs.«203835_g19404662243951_cont_8to1_399_35_alg».proof.Proof.Gen.Kernel.Skeleton
import Idealize.ShloMosaic.Lib.Tactic

noncomputable section

namespace Cert.Proof.FfnnB
open Cert.Proof.Ffnn

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig (HIx 1) (Elt F) ℕ BagB.UU ℕ

variable (c : Dev nD) (V : (b : Ref sig .tc) → Buf (Elt F) ((c : Thread nD τ).loc b)) (O : CellTallies nD τ sig (HIx 1))
  (B : Set (SemLoc sig × HIx 1))

/-! ## The body's triple -/

/-- The head as the body computes it is the body's stored value. -/
theorem block_eq_pay (x0 : Vec F S512x64 .f32) (x1 : Vec F S64x256 .f32) (x2 : Vec F S1x256 .f32) (x3 : Vec F S256x50 .f32) (x4 : Vec F S1x50 .f32) :
    block k50 x0 x1 x2 x3 x4 = k2_pay1 x0 x1 x2 x3 x4 := rfl

/-- The whole-buffer rectangle's offsets are zero. -/
theorem hz : (![0, 0] : Fin 2 → ℕ) = fun _ => 0 := funext fun a => by fin_cases a <;> rfl

/-- One store through the whole-buffer rectangle covers every index of the result block. -/
theorem cover_out (w : Vec F S512x50 .f32) (y : S512x50.Idx) :
    ∃ pc ∈ ([⟨Rect.unit (s := S512x50) ![0, 0] S512x50.size inb_S512x50_S512x50_0_0, w⟩] : List (View.Piece (Elt F) S512x50 .f32)), y ∈ pc.1.set :=
  View.cover_of_tiled [⟨Rect.unit (s := S512x50) ![0, 0] S512x50.size inb_S512x50_S512x50_0_0, w⟩] S512x50.size (by rfl) y

/-- The body on whole staging memrefs, the five inputs' at read contents `x0 … x4`, the result's at anything, runs to the
    continuation holding the inputs' as they were and the result's at the head of `x0`. -/
theorem sound_kernel (i : grid2.Coords)
    (arg1 : Memref sig .tc .vmem S512x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S256x50 .f32) (harg4 : arg4.IsWhole)
    (arg5 : Memref sig .tc .vmem S1x50 .f32) (harg5 : arg5.IsWhole) (arg6 : Memref sig .tc .vmem S512x50 .f32) (harg6 : arg6.IsWhole)
    (x0 : Vec F S512x64 .f32) (x1 : Vec F S64x256 .f32) (x2 : Vec F S1x256 .f32) (x3 : Vec F S256x50 .f32) (x4 : Vec F S1x50 .f32)
    (Kp : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (block k50 x0 x1 x2 x3 x4)) -∗ Kp ⟨⟩))
      ⊢ wp frame (wpE (defs₀ (F := F)) BagB.𝒱₀ (c : Thread nD τ) none) Set.univ
          (cc2__ffnn_body i arg1 harg1 arg2 harg2 arg3 harg3 arg4 harg4 arg5 harg5 arg6 harg6) Kp := by
  simp only [cc2__ffnn_body_eq_skeleton]; unfold cc2__ffnn_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_out _), View.canon_unit_zero hz]
  simp only [View.readAt_eq_ld, View.ld_unit_zero (S := S512x64) hz, View.ld_unit_zero (S := S64x256) hz,
    View.ld_unit_zero (S := S1x256) hz, View.ld_unit_zero (S := S256x50) hz, View.ld_unit_zero (S := S1x50) hz]
  rfl

/-! ## The body obligation, at a generic point -/

/-- What the body is called with at point `t`, the windows one by one, -/
def bodyPre (t : Fin cfg2.N) : sProp 𝕄 :=
  iprop((dat1 c V O B).Φ t.castSucc ∗ (dat1 c V O B).owesAt (none : HIx 1) t.castSucc
    ∗ (∃ d, owns (c : Thread nD τ) (st2_0 t) fullShare ((dat1 c V O B).before 0 t d))
    ∗ (∃ d, owns (c : Thread nD τ) (st2_1 t) fullShare ((dat1 c V O B).before 1 t d))
    ∗ (∃ d, owns (c : Thread nD τ) (st2_2 t) fullShare ((dat1 c V O B).before 2 t d))
    ∗ (∃ d, owns (c : Thread nD τ) (st2_3 t) fullShare ((dat1 c V O B).before 3 t d))
    ∗ (∃ d, owns (c : Thread nD τ) (st2_4 t) fullShare ((dat1 c V O B).before 4 t d))
    ∗ (∃ d, owns (c : Thread nD τ) (st2_5 t) fullShare ((dat1 c V O B).before 5 t d)))

/-- and what it returns. -/
def bodyPost (t : Fin cfg2.N) : sProp 𝕄 :=
  iprop((dat1 c V O B).Φ t.succ ∗ (dat1 c V O B).owesAt (none : HIx 1) t.succ
    ∗ owns (c : Thread nD τ) (st2_0 t) fullShare ((dat1 c V O B).after 0 t)
    ∗ owns (c : Thread nD τ) (st2_1 t) fullShare ((dat1 c V O B).after 1 t)
    ∗ owns (c : Thread nD τ) (st2_2 t) fullShare ((dat1 c V O B).after 2 t)
    ∗ owns (c : Thread nD τ) (st2_3 t) fullShare ((dat1 c V O B).after 3 t)
    ∗ owns (c : Thread nD τ) (st2_4 t) fullShare ((dat1 c V O B).after 4 t)
    ∗ owns (c : Thread nD τ) (st2_5 t) fullShare ((dat1 c V O B).after 5 t))

/-- The body at any point: the inputs' buffers hold their blocks, the result's anything; the invariant and the core's
    `owes` pass through unread. -/
theorem sound_body (t : Fin cfg2.N) :
    bodyPre c V O B t ⊢ wp frame (wpE (defs₀ (F := F)) BagB.𝒱₀ (c : Thread nD τ) none) Set.univ (bodyAt2 t) (fun _ => bodyPost c V O B t) := by
  unfold bodyPre bodyPost bodyAt2
  simp only [before_0, before_1, before_2, before_3, before_4, before_5]
  rw [show (dat1 c V O B).Φ t.succ = (dat1 c V O B).Φ t.castSucc from rfl,
    show (dat1 c V O B).owesAt (none : HIx 1) t.succ = (dat1 c V O B).owesAt (none : HIx 1) t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c _ _ _ _ _ _ _ _ _ _ _ _ _ (iblk c V 0 t) (iblk c V 1 t) (iblk c V 2 t) (iblk c V 3 t) (iblk c V 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation : BodyObligation (dat1 (F := F) c V O B) (defs₀ (F := F)) BagB.𝒱₀ (none : HIx 1) Set.univ := fun t => by
  rw [bigSep_W2, bigSep_W2]
  exact sound_body c V O B t

end Cert.Proof.FfnnB
end
-- ==== Proof.FfnnValueB.lean ====
/-
  The result array after region 1: every block of 512 rows written back is the head of the same block of the sums, and the
  8 blocks tile the array, so the array ends holding `Ffnn.out` of the sums and the four parameter arrays.

  A window's block at point `t` sits in its array, on each axis, at the block index times the block's size: the sums' and
  the result's windows have block index `(t, 0)`, the four parameter windows `(0, 0)` (each is its whole array).
-/
import proofs.«203835_g19404662243951_cont_8to1_399_35_alg».proof.Proof.FfnnDataB

noncomputable section

namespace Cert.Proof.FfnnB
open Cert.Proof.Ffnn

open Cert.Kernel Cert.Kernel.Gen
open Idealize.ShloMosaic Idealize.ShloMosaic.TcCoe Idealize.ShloMosaic.ValueIdx
open Idealize.ShloMosaic.SparseCore.Cfg (HIx)
open Idealize.SL Idealize.SL.Sem
open Idealize.ShloMosaic.Pipeline (Dat Cfg Window)

variable {F : FTy → Type} [FloatOps F]

/-- Row `512 t + r` of the head of the whole array is row `r` of the head of block `t`. -/
theorem out_apply (k : F .f32) (s : FVec F SSum .f32) (w1 : FVec F SW1 .f32) (b1 : FVec F SB1 .f32) (w2 : FVec F SW2 .f32)
    (b2 : FVec F SB2 .f32) (i : SOut.Idx) (t : Nat) (x : SO.Idx) (h0 : (i 0).val = 512 * t + (x 0).val) (h1 : (i 1).val = (x 1).val) :
    out k s w1 b1 w2 b2 i = block k (rowsOf s t) w1 b1 w2 b2 x := by
  have hx : (x 0).val < 512 := (x 0).isLt
  have hd : (i 0).val / 512 = t := by omega
  have hm : (i 0).val % 512 = (x 0).val := by omega
  unfold out
  rw [hd]
  congr 1
  funext a
  match a with
  | ⟨0, _⟩ => exact Fin.ext hm
  | ⟨1, _⟩ => exact Fin.ext h1

/-- The block indices of the six windows. -/
theorem index_0 (t : Fin cfg2.N) : win2_0.index t 0 = t.val ∧ win2_0.index t 1 = 0 := by
  rcases fin_N2 t with rfl | rfl | rfl | rfl | rfl | rfl | rfl | rfl <;> decide
theorem index_1 (t : Fin cfg2.N) : win2_1.index t 0 = 0 ∧ win2_1.index t 1 = 0 := by
  rcases fin_N2 t with rfl | rfl | rfl | rfl | rfl | rfl | rfl | rfl <;> decide
theorem index_2 (t : Fin cfg2.N) : win2_2.index t 0 = 0 ∧ win2_2.index t 1 = 0 := by
  rcases fin_N2 t with rfl | rfl | rfl | rfl | rfl | rfl | rfl | rfl <;> decide
theorem index_3 (t : Fin cfg2.N) : win2_3.index t 0 = 0 ∧ win2_3.index t 1 = 0 := by
  rcases fin_N2 t with rfl | rfl | rfl | rfl | rfl | rfl | rfl | rfl <;> decide
theorem index_4 (t : Fin cfg2.N) : win2_4.index t 0 = 0 ∧ win2_4.index t 1 = 0 := by
  rcases fin_N2 t with rfl | rfl | rfl | rfl | rfl | rfl | rfl | rfl <;> decide
theorem index_5 (t : Fin cfg2.N) : win2_5.index t 0 = t.val ∧ win2_5.index t 1 = 0 := by
  rcases fin_N2 t with rfl | rfl | rfl | rfl | rfl | rfl | rfl | rfl <;> decide

variable (c : Dev nD) (V : (b : Ref sig .tc) → Buf (Elt F) ((c : Thread nD τ).loc b)) (O : CellTallies nD τ sig (HIx 1))
  (B : Set (SemLoc sig × HIx 1))

/-- The sums' block at point `t` is rows `[512 t, 512 t + 512)` of the sums. -/
theorem iblk_0 (t : Fin cfg2.N) : iblk c V 0 t = rowsOf (V main_v5) t.val := by
  funext x
  have hx : (x 0).val < 512 := (x 0).isLt
  have ht : t.val < 8 := by have := t.isLt; have h8 : cfg2.N = 8 := N_2; omega
  unfold iblk rowsOf
  rw [View.read_apply, dif_pos (show 512 * t.val + (x 0).val < 4096 by omega)]
  show V main_v5 _ = V main_v5 _
  congr 1
  funext a
  apply Fin.ext
  match a with
  | ⟨0, _⟩ => show win2_0.index t 0 * 512 + 1 * (x 0).val = 512 * t.val + (x 0).val; rw [(index_0 t).1]; omega
  | ⟨1, _⟩ => show win2_0.index t 1 * 64 + 1 * (x 1).val = (x 1).val; rw [(index_0 t).2]; omega

/-- Each parameter window's block is its whole array. -/
theorem iblk_1 (t : Fin cfg2.N) : iblk c V 1 t = V main_arg2 := by
  funext x
  unfold iblk
  rw [View.read_apply]
  show V main_arg2 _ = V main_arg2 x
  congr 1
  funext a
  apply Fin.ext
  match a with
  | ⟨0, _⟩ => show win2_1.index t 0 * 64 + 1 * (x 0).val = (x 0).val; rw [(index_1 t).1]; omega
  | ⟨1, _⟩ => show win2_1.index t 1 * 256 + 1 * (x 1).val = (x 1).val; rw [(index_1 t).2]; omega
theorem iblk_2 (t : Fin cfg2.N) : iblk c V 2 t = V main_v6 := by
  funext x
  unfold iblk
  rw [View.read_apply]
  show V main_v6 _ = V main_v6 x
  congr 1
  funext a
  apply Fin.ext
  match a with
  | ⟨0, _⟩ => show win2_2.index t 0 * 1 + 1 * (x 0).val = (x 0).val; rw [(index_2 t).1]; omega
  | ⟨1, _⟩ => show win2_2.index t 1 * 256 + 1 * (x 1).val = (x 1).val; rw [(index_2 t).2]; omega
theorem iblk_3 (t : Fin cfg2.N) : iblk c V 3 t = V main_arg4 := by
  funext x
  unfold iblk
  rw [View.read_apply]
  show V main_arg4 _ = V main_arg4 x
  congr 1
  funext a
  apply Fin.ext
  match a with
  | ⟨0, _⟩ => show win2_3.index t 0 * 256 + 1 * (x 0).val = (x 0).val; rw [(index_3 t).1]; omega
  | ⟨1, _⟩ => show win2_3.index t 1 * 50 + 1 * (x 1).val = (x 1).val; rw [(index_3 t).2]; omega
theorem iblk_4 (t : Fin cfg2.N) : iblk c V 4 t = V main_v7 := by
  funext x
  unfold iblk
  rw [View.read_apply]
  show V main_v7 _ = V main_v7 x
  congr 1
  funext a
  apply Fin.ext
  match a with
  | ⟨0, _⟩ => show win2_4.index t 0 * 1 + 1 * (x 0).val = (x 0).val; rw [(index_4 t).1]; omega
  | ⟨1, _⟩ => show win2_4.index t 1 * 50 + 1 * (x 1).val = (x 1).val; rw [(index_4 t).2]; omega

/-- The head of the whole array of sums, as contents of the result array. -/
abbrev result : Buf (Elt F) ((c : Thread nD τ).loc main_v8) :=
  out k50 (V main_v5) (V main_arg2) (V main_v6) (V main_arg4) (V main_v7)

/-- What each point writes back is its block of `result`. -/
theorem flushed_eq (t : Fin cfg2.N) (hf : (cfg2.win 5).flush t = true) :
    (dat1 c V O B).flushed 5 t = ((cfg2.win 5).blk t).view.read (Elt F) (result c V) := by
  show (cfg2.win 5).cut (grid2.coords t) ((dat1 c V O B).after 5 t) = _
  rw [after_5]
  funext x
  rw [View.read_apply]
  show oblk c V t x = result c V _
  unfold oblk result
  rw [iblk_0, iblk_1, iblk_2, iblk_3, iblk_4]
  refine (out_apply k50 _ _ _ _ _ _ t.val x ?_ ?_).symm
  · show win2_5.index t 0 * 512 + 1 * (x 0).val = 512 * t.val + (x 0).val; rw [(index_5 t).1]; omega
  · show win2_5.index t 1 * 50 + 1 * (x 1).val = (x 1).val; rw [(index_5 t).2]; omega

/-- The 8 blocks tile the result array. -/
theorem cover5 (i : S4096x50.Idx) : ∃ t : Fin cfg2.N, (cfg2.win 5).flush t = true ∧ i ∈ ((cfg2.win 5).blk t).view.set := by
  have hi : (i 0).val < 4096 := (i 0).isLt
  have hi1 : (i 1).val < 50 := (i 1).isLt
  have ht : (i 0).val / 512 < cfg2.N := by rw [show cfg2.N = 8 from N_2]; omega
  refine ⟨⟨(i 0).val / 512, ht⟩, flush2_5 _, ?_⟩
  show i ∈ ((View.whole main_v8).slice (win2_5.rect ⟨(i 0).val / 512, ht⟩)).set
  rw [View.set_slice_whole, Rect.mem_set_unit]
  intro a
  match a with
  | ⟨0, _⟩ =>
    show win2_5.index ⟨(i 0).val / 512, ht⟩ 0 * 512 ≤ (i 0 : Nat) ∧ (i 0 : Nat) < win2_5.index ⟨(i 0).val / 512, ht⟩ 0 * 512 + 512
    rw [(index_5 ⟨(i 0).val / 512, ht⟩).1]; show (i 0).val / 512 * 512 ≤ _ ∧ _ < (i 0).val / 512 * 512 + 512; omega
  | ⟨1, _⟩ =>
    show win2_5.index ⟨(i 0).val / 512, ht⟩ 1 * 50 ≤ (i 1 : Nat) ∧ (i 1 : Nat) < win2_5.index ⟨(i 0).val / 512, ht⟩ 1 * 50 + 50
    rw [(index_5 ⟨(i 0).val / 512, ht⟩).2]; omega

/-- So the result array ends holding the head of the whole array of sums. -/
theorem final_o : (dat1 c V O B).arrAt 5 cfg2.N = result c V :=
  (dat1 c V O B).arrAt_eq_of_cover 5 (result c V) (flushed_eq c V O B) cover5

end Cert.Proof.FfnnB
end
-- ==== Proof.FfnnRegionB.lean ====
/-
  Region 1 as a segment of the program: the region's record, over any family of proof data whose entry for
  pipeline 1 is `FfnnData`'s read relationally. Entered holding the six arrays as found and the core owing nothing, left
  holding the five operands unchanged, the result array at the head of the whole array of sums (`FfnnValue`), and the core
  owing nothing; the pairs its waits have recorded stay at or below a given level.
-/
import proofs.«203835_g19404662243951_cont_8to1_399_35_alg».proof.Proof.FfnnBodyB
import proofs.«203835_g19404662243951_cont_8to1_399_35_alg».proof.Proof.FfnnValueB
import proofs.«203835_g19404662243951_cont_8to1_399_35_alg».proof.Proof.RegionB

noncomputable section

namespace Cert.Proof.FfnnB
open Cert.Proof.Ffnn

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig (HIx 1) (Elt F) ℕ BagB.UU ℕ

/-! ## The region's record -/

section Region

variable (V : (c : Dev nD) → (b : Ref sig .tc) → Buf (Elt F) ((c : Thread nD τ).loc b)) (b : ℕ)

/-- The five operand arrays as the region finds them and leaves them. -/
def inArrs (c : Dev nD) : sProp 𝕄 :=
  iprop((((c : Thread nD τ).loc main_v5) ↦{fullShare} V c main_v5) ∗ (((c : Thread nD τ).loc main_arg2) ↦{fullShare} V c main_arg2)
    ∗ (((c : Thread nD τ).loc main_v6) ↦{fullShare} V c main_v6) ∗ (((c : Thread nD τ).loc main_arg4) ↦{fullShare} V c main_arg4)
    ∗ (((c : Thread nD τ).loc main_v7) ↦{fullShare} V c main_v7))

/-- What the core owes (nothing), its recorded pairs at or below level `b`. -/
def owesB (c : Dev nD) : sProp 𝕄 :=
  iprop(∃ W, ⌜(BagB.K (F := F)).WBelow (c : Thread nD τ) W b⌝ ∗ owes (c : Thread nD τ) (0 : CellTallies nD τ sig (HIx 1)) W)

/-- The thread state the region is entered from: the six arrays as found, the core owing nothing. -/
def pre1 (c : Dev nD) : sProp 𝕄 :=
  iprop(inArrs V c ∗ (((c : Thread nD τ).loc main_v8) ↦{fullShare} V c main_v8) ∗ owesB (F := F) b c)

/-- The thread state it leaves: the operands unchanged, the result written. -/
def post1 (c : Dev nD) : sProp 𝕄 :=
  iprop(inArrs V c ∗ (((c : Thread nD τ).loc main_v8) ↦{fullShare} result c (V c)) ∗ owesB (F := F) b c)

/-- The six arrays of the proof data, one by one. -/
theorem arrays6 (c : Dev nD) (G : (w : Fin cfg2.W) → Buf (Elt F) ((cfg2.win w).arr.view.loc (c : Thread nD τ))) :
    ((dat1b c (V c) 0 b).arrays G : sProp 𝕄)
      = iprop((((c : Thread nD τ).loc main_v5) ↦{fullShare} G 0) ∗ (((c : Thread nD τ).loc main_arg2) ↦{fullShare} G 1)
        ∗ (((c : Thread nD τ).loc main_v6) ↦{fullShare} G 2) ∗ (((c : Thread nD τ).loc main_arg4) ↦{fullShare} G 3)
        ∗ (((c : Thread nD τ).loc main_v7) ↦{fullShare} G 4) ∗ (((c : Thread nD τ).loc main_v8) ↦{fullShare} G 5)) := by
  unfold Dat.arrays
  rw [bigSep_W2]
  simp only [(dat1b c (V c) 0 b).share_full (fun _ => rfl)]
  simp only [Memref.view_whole, View.set_whole]

/-- The invariant is the scoped rest, at every point. -/
theorem Φ_eq (c : Dev nD) (t : Fin (cfg2.N + 1)) :
    (dat1b c (V c) 0 b).toR.Φ t = Pipeline.scopedRest (Ix := HIx 1) (Name := ℕ) (U := BagB.UU) (Lvl := ℕ) (Val := Elt F) spec2 c := rfl

/-- ENTRY: the six arrays are the pipeline's, at the data's entry contents; the core's `owes` within the data's bound. -/
theorem entry1 (c : Dev nD) (R : sProp 𝕄) :
    iprop(pre1 V b c ∗ R)
      ⊢ iprop((dat1b c (V c) 0 b).toR.arrays (dat1b c (V c) 0 b).toR.A ∗ (dat1b c (V c) 0 b).toR.owesAt (none : HIx 1) 0) := by
  simp only [Pipeline.Dat.toR_arrays, Pipeline.Dat.toR_A]
  rw [arrays6]
  unfold pre1 inArrs owesB
  iintro ⟨⟨⟨H0, H1, H2, H3, H4⟩, H5, HO⟩, -⟩
  isplitl [H0 H1 H2 H3 H4 H5]
  · isplitl [H0]; · iexact H0
    isplitl [H1]; · iexact H1
    isplitl [H2]; · iexact H2
    isplitl [H3]; · iexact H3
    isplitl [H4]; · iexact H4
    iexact H5
  unfold Pipeline.RDat.owesAt Pipeline.owesWithin
  icases HO with ⟨%W, %hW, HO⟩; iexists W; isplitr; · ipureintro; exact fun p hp => Or.inl (hW p hp)
  iexact HO

/-- EXIT: the arrays after the last write-back and the core's `owes` make the exit state. -/
theorem exit1 (c : Dev nD) :
    iprop((dat1b c (V c) 0 b).toR.arraysAt cfg2.N ∗ (dat1b c (V c) 0 b).toR.owesAt (none : HIx 1) (Fin.last cfg2.N))
      ⊢ post1 V b c := by
  rw [Pipeline.Dat.toR_arraysAt_eq, arrays6]
  rw [(dat1b c (V c) 0 b).arrAt_in 0 rfl, (dat1b c (V c) 0 b).arrAt_in 1 rfl, (dat1b c (V c) 0 b).arrAt_in 2 rfl,
    (dat1b c (V c) 0 b).arrAt_in 3 rfl, (dat1b c (V c) 0 b).arrAt_in 4 rfl, final_o c (V c) 0 (lvlSet (F := F) c b)]
  unfold post1 inArrs owesB
  iintro ⟨⟨H0, H1, H2, H3, H4, H5⟩, HO⟩
  isplitl [H0 H1 H2 H3 H4]
  · isplitl [H0]; · iexact H0
    isplitl [H1]; · iexact H1
    isplitl [H2]; · iexact H2
    isplitl [H3]; · iexact H3
    iexact H4
  isplitl [H5]; · iexact H5
  unfold Pipeline.RDat.owesAt Pipeline.owesWithin
  icases HO with ⟨%W, %hW, HO⟩; iexists W; isplitr
  · ipureintro
    intro p hp
    rcases hW hp with h | ⟨w, s, rfl⟩
    · exact h
    · exact Nat.zero_le _
  iexact HO

end Region

section Record

variable (V : (c : Dev nD) → (b : Ref sig .tc) → Buf (Elt F) ((c : Thread nD τ).loc b)) (b : ℕ)
variable (rdats : (p : Fin 2) → (c : Dev nD) → Pipeline.RDat τ (Elt F) (HIx 1) ℕ BagB.UU ℕ (Pipeline.pin (pcfgs (F := F)) BagB.adm p) c)

set_option backward.isDefEq.respectTransparency.types false in
/-- REGION 1 over a family of proof data whose entry for pipeline 1 is the data above read relationally: entered from
    `pre1` (the arrays sorted into the pipeline's, nothing else enters), left at `post1`. The kernel has no semaphore
    of its own; the invariant is the scoped rest. -/
def R1 (h1 : ∀ c, rdats 1 c = (dat1b c (V c) 0 b).toR) :
    Pipeline.RDat.RegionSeg (pcfgs (F := F)) BagB.adm rdats (none : HIx 1) defs₀ BagB.𝒱₀ (BagB.K (F := F)).L (BagB.K (F := F)).lev 1 where
  win := launch2.win.to₀
  block_pos := launch2.block_pos
  stage_whole := launch2.stage_whole
  K := PEmpty
  osem k := k.elim
  ho := Pipeline.OwnSemFacts.none _
  hbody c := by rw [h1 c]; exact (body_obligation c (V c) 0 _).loose.toR
  hwaits := Pipeline.RDat.hwaits_of_owed_zero _ _ _ _ _ _ 1 fun c t => by rw [h1 c]; rfl
  pre := pre1 V b
  post := post1 V b
  X _ := BI.emp
  Y _ := BI.emp
  Z _ := BI.emp
  hentry c := by
    rw [h1 c]
    refine (entry1 V b c _).trans ?_
    iintro ⟨Ha, HO⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [h1 c]
    refine .trans ?_ (Entails.of_eq (Φ_eq V b c 0).symm)
    show iprop(_ ∗ _ ∗ Pipeline.scopedRest (Ix := HIx 1) (Name := ℕ) (U := BagB.UU) (Lvl := ℕ) (Val := Elt F) spec2 c) ⊢ _
    iintro ⟨-, -, Hr⟩; iexact Hr
  hout c := by
    rw [Pipeline.ownSems0_none, h1 c]
    refine (Entails.of_eq (Φ_eq V b c _)).trans ?_
    show _ ⊢ iprop(_ ∗ _ ∗ Pipeline.scopedRest (Ix := HIx 1) (Name := ℕ) (U := BagB.UU) (Lvl := ℕ) (Val := Elt F) spec2 c)
    iintro Hr
    isplitr; · iempintro
    isplitr; · iempintro
    iexact Hr
  hexit c := by
    rw [h1 c]
    iintro ⟨Ha, HO, -, -⟩
    imodintro
    iapply (exit1 V b c)
    isplitl [Ha] <;> iassumption

end Record

end Cert.Proof.FfnnB
end
-- ==== Proof.JoinB.lean ====
/-
  The two TensorCore regions joined: the relaying region and the dense region as the records of `Pack` and `FfnnRegion`,
  each over a family of proof data for both pipelines, with their entry and exit states spelt over @main's arrays.

  The relaying region is entered with the transposed embeddings and the relaid table's buffer as launched. The dense region
  is entered after the SparseCore call and the two reshapes: the core's buffers are then the launch memory's but for the
  sums (the bag sums over whatever table the relaying left) and the two bias rows.
-/
import proofs.«203835_g19404662243951_cont_8to1_399_35_alg».proof.Proof.MainB
import proofs.«203835_g19404662243951_cont_8to1_399_35_alg».proof.Proof.PackB
import proofs.«203835_g19404662243951_cont_8to1_399_35_alg».proof.Proof.FfnnRegionB

noncomputable section

namespace Cert.Proof.FfnnB
open Cert.Proof.Ffnn

open Cert.Kernel Cert.Kernel.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ BagB.UU ℕ

/-! ## A valuation changed at the sums and the two bias rows -/

/-- A valuation of the core's buffers changed at the sums and the two reshaped bias rows. -/
def setV (c : Dev nD) (V₀ : (b : Ref sig .tc) → Buf (Elt F) ((c : Thread nD τ).loc b))
    (s : Buf (Elt F) ((c : Thread nD τ).loc main_v5)) (b1 : Buf (Elt F) ((c : Thread nD τ).loc main_v6))
    (b2 : Buf (Elt F) ((c : Thread nD τ).loc main_v7)) : (b : Ref sig .tc) → Buf (Elt F) ((c : Thread nD τ).loc b) :=
  Function.update (Function.update (Function.update V₀ main_v5 s) main_v6 b1) main_v7 b2

section SetV

variable (c : Dev nD) (V₀ : (b : Ref sig .tc) → Buf (Elt F) ((c : Thread nD τ).loc b))
    (s : Buf (Elt F) ((c : Thread nD τ).loc main_v5)) (b1 : Buf (Elt F) ((c : Thread nD τ).loc main_v6))
    (b2 : Buf (Elt F) ((c : Thread nD τ).loc main_v7))

theorem setV_v5 : setV c V₀ s b1 b2 main_v5 = s := by
  unfold setV
  rw [Function.update_of_ne (by decide), Function.update_of_ne (by decide), Function.update_self]
theorem setV_v6 : setV c V₀ s b1 b2 main_v6 = b1 := by
  unfold setV
  rw [Function.update_of_ne (by decide), Function.update_self]
theorem setV_v7 : setV c V₀ s b1 b2 main_v7 = b2 := by
  unfold setV
  rw [Function.update_self]
theorem setV_of_ne (b : Ref sig .tc) (h5 : b ≠ main_v5) (h6 : b ≠ main_v6) (h7 : b ≠ main_v7) : setV c V₀ s b1 b2 b = V₀ b := by
  unfold setV
  rw [Function.update_of_ne h7, Function.update_of_ne h6, Function.update_of_ne h5]
theorem setV_arg2 : setV c V₀ s b1 b2 main_arg2 = V₀ main_arg2 := setV_of_ne c V₀ s b1 b2 _ (by decide) (by decide) (by decide)
theorem setV_arg4 : setV c V₀ s b1 b2 main_arg4 = V₀ main_arg4 := setV_of_ne c V₀ s b1 b2 _ (by decide) (by decide) (by decide)
theorem setV_v8 : setV c V₀ s b1 b2 main_v8 = V₀ main_v8 := setV_of_ne c V₀ s b1 b2 _ (by decide) (by decide) (by decide)

end SetV

/-! ## The two families and the two records -/

variable (m : (ℓ : Loc nD τ sig) → Buf (Elt F) ℓ) (PK : FVec F Spec.STab .f32 → Prop)

/-- The core's buffers as launched. -/
abbrev Vm (c : Dev nD) : (b : Ref sig .tc) → Buf (Elt F) ((c : Thread nD τ).loc b) := fun b => m ((c : Thread nD τ).loc b)

/-- The core's buffers when the dense region is entered, the relaid table holding `tab`. -/
def Vr (tab : FVec F Spec.STab .f32) (c : Dev nD) : (b : Ref sig .tc) → Buf (Elt F) ((c : Thread nD τ).loc b) :=
  setV c (Vm m c) (Spec.bagSums (BagB.flatM m c) tab) (BagB.b1r m c) (BagB.b2r m c)

/-- The relaying pipeline's proof data. -/
abbrev rdP (c : Dev nD) : Pipeline.RDat τ (Elt F) (HIx 1) ℕ BagB.UU ℕ cfg0 c :=
  PackB.rdat0 c (BagB.a0 m c) (m ((c : Thread nD τ).loc main_v1)) ((BagB.K (F := F)).Otc c 0) 0

/-- The family the relaying region is certified over: its own data, and the dense pipeline's at the launch memory. -/
def rd0 : (p : Fin 2) → (c : Dev nD) → Pipeline.RDat τ (Elt F) (HIx 1) ℕ BagB.UU ℕ (Pipeline.pin (pcfgs (F := F)) BagB.adm p) c :=
  fun p c => match p with
    | ⟨0, _⟩ => rdP m c
    | ⟨1, _⟩ => (dat1b c (Vm m c) 0 8).toR

/-- The family the dense region is certified over, the relaid table holding `tab`. -/
def rd1 (tab : FVec F Spec.STab .f32) : (p : Fin 2) → (c : Dev nD) → Pipeline.RDat τ (Elt F) (HIx 1) ℕ BagB.UU ℕ (Pipeline.pin (pcfgs (F := F)) BagB.adm p) c :=
  fun p c => match p with
    | ⟨0, _⟩ => rdP m c
    | ⟨1, _⟩ => (dat1b c (Vr m tab c) 0 8).toR

/-- Before the SparseCore call the TensorCore owes nothing at the index of the pipelines' own waits. -/
theorem Otc_none (c : Dev nD) (n : ℕ) (g : GSem nD τ sig) : (BagB.K (F := F)).Otc c n g none = 0 := by
  by_contra h
  have := SparseCore.Cfg.lev_of_Otc_pos (K := BagB.K (F := F)) (Nat.pos_of_ne_zero h)
  rw [SparseCore.Cfg.lev_none] at this
  omega

/-- The two regions. -/
def regions (hPK : ∀ c f, (rdP m c).ArrAt 1 cfg0.N f → PK (PackB.asTab c f)) : BagB.Regions m PK where
  rd0 := rd0 m
  R0 := PackB.R0 (rd0 m) (BagB.a0 m) (fun c => m ((c : Thread nD τ).loc main_v1)) (fun c => (BagB.K (F := F)).Otc c 0) 0 (fun _ => rfl)
    (fun c g => Otc_none c 0 g) PK hPK
  pre0 d := BI.Entails.refl _
  post0 d := BI.Entails.refl _
  rd1 := rd1 m
  R1 tab := R1 (Vr m tab) 8 (rd1 m tab) (fun _ => rfl)
  pre1 tab d := by
    show _ ⊢ pre1 (Vr m tab) 8 d
    unfold pre1 inArrs owesB Vr
    rw [setV_v5, setV_v6, setV_v7, setV_arg2, setV_arg4, setV_v8]
    iintro ⟨H5, H2, H6, H4, H7, H8, HO⟩
    isplitl [H5 H2 H6 H4 H7]
    · isplitl [H5]; · iexact H5
      isplitl [H2]; · iexact H2
      isplitl [H6]; · iexact H6
      isplitl [H4]; · iexact H4
      iexact H7
    isplitl [H8]; · iexact H8
    iexact HO
  post1 tab d := by
    show post1 (Vr m tab) 8 d ⊢ _
    unfold post1 inArrs owesB result Vr
    rw [setV_v5, setV_v6, setV_v7, setV_arg2, setV_arg4]
    iintro ⟨⟨H5, H2, H6, H4, H7⟩, H8, HO⟩
    isplitl [H5]; · iexact H5
    isplitl [H2]; · iexact H2
    isplitl [H6]; · iexact H6
    isplitl [H4]; · iexact H4
    isplitl [H7]; · iexact H7
    isplitl [H8]; · iexact H8
    iexact HO

end Cert.Proof.FfnnB
end
-- ==== Proof.TilePreB.lean ====
/-
  One vector subcore's scratch: its five buffers and six DMA semaphores picked out of the subcore's own storage, and the
  operands as the subcore's memrefs address them.
-/
import proofs.«203835_g19404662243951_cont_8to1_399_35_alg».proof.Proof.TileDefsB

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The worker number of the subcore at `L`. -/
def wL (L : grid1.Coords) : Fin 32 := widF (Fin.cast bound_zero (L 0)) (Fin.cast bound_one (L 1))

/-- The six DMA semaphores of the scratch, in the kernel's order: the two gathers', the two index copies', the two
    write-backs'. -/
def semOf : Fin 6 → DmaSem sig
  | 0 => cc1_scratch5.sem | 1 => cc1_scratch6.sem | 2 => cc1_scratch7.sem
  | 3 => cc1_scratch8.sem | 4 => cc1_scratch9.sem | 5 => cc1_scratch10.sem
abbrev cellK (d : Dev nD) (c : Fin τ.nSC) (i : Fin τ.nSub) (k : Fin 6) : GSem nD τ sig := (V d c i, .dma (semOf k))

theorem semOf_inj : Function.Injective semOf := by decide

def cellEmb (d : Dev nD) (c : Fin τ.nSC) (i : Fin τ.nSub) : Fin 6 ↪ GSem nD τ sig :=
  ⟨cellK d c i, fun a b e => semOf_inj (SemLoc.dma.inj (Prod.mk.inj e).2)⟩

theorem cells_sub (c : Fin τ.nSC) (i : Fin τ.nSub) : Finset.univ.map (cellEmb d c i) ⊆ ownCells (V d c i) := by
  intro g hg
  obtain ⟨k, -, rfl⟩ := Finset.mem_map.mp hg
  refine mem_ownCells.mpr ⟨rfl, ?_⟩
  have h : ∀ k : Fin 6, (SemLoc.dma (semOf k) : SemLoc sig).isScoped .scVector = true := by decide
  exact h k

omit d in
theorem bigSep_fin6 (Φ : Fin 6 → sProp 𝕄) :
    bigSep (Finset.univ : Finset (Fin 6)) Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]
omit d in
theorem bigSep_fin5 (Φ : Fin 5 → sProp 𝕄) :
    bigSep (Finset.univ : Finset (Fin 5)) Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-- The subcore's own semaphores at zero: the scratch's six and the rest. -/
theorem ownSems0_V (c : Fin τ.nSC) (i : Fin τ.nSub) :
    (ownSems0 (V d c i) : sProp 𝕄)
      = iprop((semVal (cellK d c i 0) 0 ∗ semVal (cellK d c i 1) 0 ∗ semVal (cellK d c i 2) 0 ∗ semVal (cellK d c i 3) 0
          ∗ semVal (cellK d c i 4) 0 ∗ semVal (cellK d c i 5) 0)
          ∗ bigSep (ownCells (V d c i) \ Finset.univ.map (cellEmb d c i)) fun g => semVal g 0) := by
  unfold SparseCore.Cfg.ownSems0
  rw [SparseCore.bigSep_sdiff_split' (cells_sub d c i), BI.bigSep_map, bigSep_fin6]
  rfl

/-- The five buffers of the scratch, in the kernel's order: the index words, the table rows' numbers, the column
    offsets, the gathered rows (two slots), the sums written back (two slots). -/
def bufOf : Fin 5 → Ref sig .scVector
  | 0 => cc1_scratch0 | 1 => cc1_scratch1 | 2 => cc1_scratch2 | 3 => cc1_scratch3 | 4 => cc1_scratch4

theorem bufOf_inj : Function.Injective bufOf := by decide

def bufEmb (c : Fin τ.nSC) (i : Fin τ.nSub) : Fin 5 ↪ DevRef τ sig :=
  ⟨fun k => (Proc.scVector c i).devRef (bufOf k), fun a b e => bufOf_inj (Proc.devRef_injective _ e)⟩

theorem bufs_sub (c : Fin τ.nSC) (i : Fin τ.nSub) : Finset.univ.map (bufEmb c i) ⊆ ownRefs (τ := τ) (sig := sig) (.scVector c i) := by
  intro b hb
  obtain ⟨k, -, rfl⟩ := Finset.mem_map.mp hb
  have h : ∀ k : Fin 5, ((Proc.scVector c i).devRef (bufOf k)).owner = .proc (.scVector c i) := by
    intro k; fin_cases k <;> rfl
  exact SparseCore.Cfg.mem_ownRefs_of_owner (p := Proc.scVector c i) (h k)

/-- The subcore's own buffers: the scratch's five, each whole at some contents, and the rest. -/
theorem ownBufs_V (c : Fin τ.nSC) (i : Fin τ.nSub) :
    (ownBufs (V d c i) : sProp 𝕄)
      = iprop(((∃ f, (V d c i).loc cc1_scratch0 ↦{fullShare} f) ∗ (∃ f, (V d c i).loc cc1_scratch1 ↦{fullShare} f)
          ∗ (∃ f, (V d c i).loc cc1_scratch2 ↦{fullShare} f) ∗ (∃ f, (V d c i).loc cc1_scratch3 ↦{fullShare} f)
          ∗ (∃ f, (V d c i).loc cc1_scratch4 ↦{fullShare} f))
          ∗ bigSep (ownRefs (τ := τ) (sig := sig) (.scVector c i) \ Finset.univ.map (bufEmb c i))
              fun b => iprop(∃ f, ((d, b) : Loc nD τ sig) ↦{fullShare} f)) := by
  unfold SparseCore.Cfg.ownBufs
  rw [show (V d c i : Thread nD τ).2 = .scVector c i from rfl, SparseCore.bigSep_sdiff_split' (bufs_sub c i), BI.bigSep_map, bigSep_fin5]
  rfl

end Tile

end Cert.Proof.BagB
end
-- ==== Proof.TileB.lean ====
/-
  One vector subcore's task of the bag-sum kernel, and the launch theorem's tile obligation from it.

  The task, at a symbolic place (SparseCore `L 0`, subcore `L 1`, worker `w = 2 (L 1) + L 0`): from a read share of the flat
  index array and of the relaid table, the worker's eight blocks of sixteen rows of the sums at whatever they hold, its five
  scratch buffers and six DMA semaphores at zero, to the same with the eight blocks holding the bag sums. `TileBody` states
  it over the kernel's body as the body table calls it; `tileObl_of_body` carries it to the launch theorem's obligation
  for every tile of every SparseCore.
-/
import proofs.«203835_g19404662243951_cont_8to1_399_35_alg».proof.Proof.TilePreB
import proofs.«203835_g19404662243951_cont_8to1_399_35_alg».proof.Proof.PayB

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Tile

variable (d : Dev nD) (L : grid1.Coords)

/-- The subcore's thread. -/
abbrev thr : Thread nD τ := V d (cV L) (jV L)

omit [FloatOps F] in
/-- The subcore's own semaphores at zero: the scratch's six, named as the body names them, and the rest. -/
theorem ownSems0_V' :
    (ownSems0 (thr d L) : sProp 𝕄)
      = iprop((semVal (thr d L, SemLoc.dma cc1_scratch5.sem) 0 ∗ semVal (thr d L, SemLoc.dma cc1_scratch6.sem) 0
          ∗ semVal (thr d L, SemLoc.dma cc1_scratch7.sem) 0 ∗ semVal (thr d L, SemLoc.dma cc1_scratch8.sem) 0
          ∗ semVal (thr d L, SemLoc.dma cc1_scratch9.sem) 0 ∗ semVal (thr d L, SemLoc.dma cc1_scratch10.sem) 0)
          ∗ bigSep (ownCells (thr d L) \ Finset.univ.map (cellEmb d (cV L) (jV L))) fun g => semVal g 0) :=
  ownSems0_V d (cV L) (jV L)

/-! ## The operands and scratches as the subcore's memrefs address them -/

omit [FloatOps F] in
theorem pts_iV (q : PosShare TreeShare) (f : Buf (Elt F) (iLoc d)) :
    ((iV : Memref sig .scVector .hbm S262144 .i32).view.loc (thr d L) ↦{q} f : sProp 𝕄) = iLoc d ↦{q} f := rfl
omit [FloatOps F] in
theorem pts_tV (q : PosShare TreeShare) (f : Buf (Elt F) (tLoc d)) :
    ((tV : Memref sig .scVector .hbm S507904x128 .f32).view.loc (thr d L) ↦{q} f : sProp 𝕄) = tLoc d ↦{q} f := rfl
omit [FloatOps F] in
theorem pts_s0 (f : Buf (Elt F) ((thr d L).loc cc1_scratch0)) :
    ((sIdx : Memref sig .scVector .vmem S2048 .i32).view.loc (thr d L) ↦{fullShare} f : sProp 𝕄) = (thr d L).loc cc1_scratch0 ↦{fullShare} f := rfl
omit [FloatOps F] in
theorem pts_s1 (f : Buf (Elt F) ((thr d L).loc cc1_scratch1)) :
    ((sTix : Memref sig .scVector .vmem S2048 .i32).view.loc (thr d L) ↦{fullShare} f : sProp 𝕄) = (thr d L).loc cc1_scratch1 ↦{fullShare} f := rfl
omit [FloatOps F] in
theorem pts_s2 (f : Buf (Elt F) ((thr d L).loc cc1_scratch2)) :
    ((sRv : Memref sig .scVector .vmem S2048 .i32).view.loc (thr d L) ↦{fullShare} f : sProp 𝕄) = (thr d L).loc cc1_scratch2 ↦{fullShare} f := rfl
omit [FloatOps F] in
theorem pts_s3 (f : Buf (Elt F) ((thr d L).loc cc1_scratch3)) :
    ((sRows : Memref sig .scVector .vmem S2x50x128 .f32).view.loc (thr d L) ↦{fullShare} f : sProp 𝕄) = (thr d L).loc cc1_scratch3 ↦{fullShare} f := rfl
omit [FloatOps F] in
theorem pts_s4 (f : Buf (Elt F) ((thr d L).loc cc1_scratch4)) :
    ((sWb : Memref sig .scVector .vmem S2x16x64 .f32).view.loc (thr d L) ↦{fullShare} f : sProp 𝕄) = (thr d L).loc cc1_scratch4 ↦{fullShare} f := rfl

end Tile

/-- The task: the kernel's body on the subcore at `L`, from what the task is handed to what it hands back, for any shares
    of the two inputs, any flat index array whose words are vocabulary indices, any recorded waits and any debt with nothing
    owed at the kernels' index. -/
def TileBody (PK : FVec F Spec.STab .f32 → Prop) : Prop :=
  ∀ (d : Dev nD) (L : grid1.Coords) (fl : IVec Spec.SFlat 32), (∀ n, (fl n).toNat ≤ 999999) → ∀ (qi qt : PosShare TreeShare)
    (O : CellTallies nD τ sig (HIx 1)) (W : Waits sig (HIx 1)), (∀ g, O g none = 0) →
    iprop(levAts (K (F := F)).L (K (F := F)).lev ∗ emp ∗ goA PK fl qi qt d (wL L)
        ∗ scopedBufs (thr d L) ∗ scopedSems0 (thr d L) ∗ owes (thr d L) O W)
      ⊢ wp frame (wpE (defs₀ (F := F)) 𝒱₀ (thr d L) none) Set.univ
          (cc1__sc_bag_sum_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10)
          fun _ => iprop(tdA PK fl qi qt d (wL L) ∗ scopedBufs (thr d L) ∗ scopedSems0 (thr d L)
            ∗ ∃ W', ⌜∀ p ∈ W', p ∈ W ∨ p.2 = none⌝ ∗ owes (thr d L) O W')

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ⟨⟩
      = SparseCore.onTile hcore1 hsub1 (fun c s => cc1__sc_bag_sum_body (coordsV c s)
          iV (Memref.isWhole_whole _) tV (Memref.isWhole_whole _) oV (Memref.isWhole_whole _)
          sIdx (Memref.isWhole_whole _) sTix (Memref.isWhole_whole _) sRv (Memref.isWhole_whole _)
          sRows (Memref.isWhole_whole _) sWb (Memref.isWhole_whole _)
          cc1_scratch5 cc1_scratch6 cc1_scratch7 cc1_scratch8 cc1_scratch9 cc1_scratch10) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (m : (ℓ : Loc nD τ sig) → Buf (Elt F) ℓ) (PK : FVec F Spec.STab .f32 → Prop)

theorem wid_coords (c : Fin ((K (F := F)).nCore 0)) (i : Fin ((K (F := F)).nSub 0))
    (hc : ((K (F := F)).core 0 c).val < grid1.bound 0) (hi : ((K (F := F)).sub 0 i).val < grid1.bound 1) :
    widN c.val i.val = wL (coordsV ⟨_, hc⟩ ⟨_, hi⟩) :=
  widN_eq (Fin.cast nCore_zero c) (Fin.cast nSub_zero i)

/-- The launch theorem's obligation for the bag-sum kernel's tiles, from the task. -/
theorem tileObl_of_body (hb : TileBody (F := F) PK) (hfl : ∀ d n, (flatM m d n).toNat ≤ 999999) :
    (K (F := F)).TileObl (D (F := F)) 𝒱 (P m PK) v₀ 0 := by
  intro d c i O W hO _ _
  simp only [show (P m PK).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hgo : (P m PK).go 0 d c i = goA PK (flatM m d) (qT c.val i.val) (qT c.val i.val) d (wL (coordsV ⟨_, hc.1⟩ ⟨_, hc.2⟩)) := by
    show goA PK (flatM m d) _ _ d (widN c.val i.val) = _
    rw [wid_coords c i hc.1 hc.2]
  have htd : (P m PK).td 0 d c i = tdA PK (flatM m d) (qT c.val i.val) (qT c.val i.val) d (wL (coordsV ⟨_, hc.1⟩ ⟨_, hc.2⟩)) := by
    show tdA PK (flatM m d) _ _ d (widN c.val i.val) = _
    rw [wid_coords c i hc.1 hc.2]
  rw [hgo, htd]
  exact (hb d (coordsV ⟨_, hc.1⟩ ⟨_, hc.2⟩) (flatM m d) (hfl d) _ _ O W hO).trans (wp_mono frame _ _ fun _ => obl_post)

end Cert.Proof.BagB
end
-- ==== Proof.RunBits.lean ====
/-
  The word-level kernel's run, in the shape its frame claim takes: on every device the six arguments unchanged. Nothing is
  asked of the relaid table's contents at this instance.
-/
import proofs.«203835_g19404662243951_cont_8to1_399_35_alg».proof.Proof.ClaimsBits
import proofs.«203835_g19404662243951_cont_8to1_399_35_alg».proof.Proof.JoinB
import proofs.«203835_g19404662243951_cont_8to1_399_35_alg».proof.Proof.TileB
import proofs.«203835_g19404662243951_cont_8to1_399_35_alg».proof.Proof.HostVals

noncomputable section

namespace Cert.Proof.FinalBits

open Cert.Kernel Cert.Kernel.Gen
open Idealize.ShloMosaic Idealize.SL.Sem
open Cert.Proof

variable (m : (ℓ : Loc nD τ sig) → Buf (Elt Bits) ℓ) (ρ : Dev nD → PrngReg)

theorem kernel_run (hbody : BagB.TileBody (F := Bits) (fun _ => True)) (hpre : Cert.Pre_Kernel m) :
    θ_run (Cert.Kernel.defs (F := Bits)) (Cert.Kernel.threads (F := Bits)) ⟨m, fun _ => 0, ρ⟩
      (fun r => ∀ c : Dev nD, ClaimsBits.ArgsKept m r.2.mem c) := by
  have h := BagB.run_main m ρ (fun _ => True) (FfnnB.regions m (fun _ => True) (fun _ _ _ => trivial)) (fun idx => HostVals.flat_eq idx _ _ _)
    (BagB.tileObl_of_body m (fun _ => True) hbody (fun d n => ClaimsBits.flat_range_Kernel m hpre d n))
  exact (θ_run _ _ _).mono (fun r hr c => (hr c).1) h

end Cert.Proof.FinalBits

end
-- ==== Proof.ClaimAll.lean ====
/-
  The five claims from the two tile tasks: everything else of the certificate is assembled here.
-/
import proofs.«203835_g19404662243951_cont_8to1_399_35_alg».proof.Proof.RunIdeal
import proofs.«203835_g19404662243951_cont_8to1_399_35_alg».proof.Proof.RunBits

noncomputable section

namespace Cert.Proof

open Idealize.ShloMosaic Idealize.SL.Sem

/-- The certificate's claim, given one vector subcore's task at both instances. -/
theorem claim_of_bodies (hI : ∀ PK, Bag.TileBody (F := Ideal) PK) (hB : ∀ PK, BagB.TileBody (F := Bits) PK) : Cert.Claim :=
  ⟨Cert.Kernel.Gen.facts, Cert.KernelIdeal.Gen.facts, Cert.ReferenceIdeal.Gen.facts, Cert.Pre_input_domain.Gen.facts,
    ClaimsBits.frame_k_of_run (fun m g hpre => FinalBits.kernel_run m g (hB _) hpre),
    ClaimsRef.frame_ki_of_run (fun m g hpre => Final.kernel_run m g (hI _) hpre),
    ClaimsRef.frame_ri,
    ClaimsRef.preserves,
    ClaimsRef.algebraic_of_run (fun m g hpre => Final.kernel_run m g (hI _) hpre)⟩

end Cert.Proof

end
-- ==== Proof.TileChk.lean ====
/-
  The side conditions the tile body states of each column-offset word it extracts: the word plus 0, 16, 32, 48 is a
  multiple of 16, and the sixteen lanes at each of those four offsets lie inside the 128 columns of a gathered row
  (whichever of the two row buffers and whichever of the 50 rows). Each holds when the word is 0 or 64; both cases are
  closed computations, for every trip of the enclosing loop.
-/
import proofs.«203835_g19404662243951_cont_8to1_399_35_alg».proof.KernelIdeal

namespace Cert.Proof.TileChk

open Idealize.ShloMosaic Cert.KernelIdeal

/-- A property of words that holds at `0` and at `64` holds of every word that is one of the two. -/
theorem of_cases {p : BitVec 32 → Prop} (h0 : p 0#32) (h64 : p 64#32) {r : BitVec 32}
    (hr : r = 0#32 ∨ r = 64#32) : p r := by
  rcases hr with rfl | rfl
  · exact h0
  · exact h64

/-- The same for a property that also depends on the trip of a loop with finitely many trips. -/
theorem of_cases_trip {n : Nat} {p : Fin n → BitVec 32 → Prop} (h0 : ∀ t, p t 0#32) (h64 : ∀ t, p t 64#32)
    (t : Fin n) {r : BitVec 32} (hr : r = 0#32 ∨ r = 64#32) : p t r :=
  of_cases (p := p t) (h0 t) (h64 t) hr

/-! ## Each stated check, from the two cases -/

theorem chk1 (t : Fin k1_t3_loop.trips) {r : BitVec 32} (hr : r = 0#32 ∨ r = 64#32) : k1_chk1 t r :=
  of_cases_trip (p := k1_chk1) (by decide) (by decide) t hr
theorem chk2 (t : Fin k1_t3_loop.trips) {r : BitVec 32} (hr : r = 0#32 ∨ r = 64#32) : k1_chk2 t r :=
  of_cases_trip (p := k1_chk2) (by decide) (by decide) t hr
theorem chk3 (t : Fin k1_t3_loop.trips) {r : BitVec 32} (hr : r = 0#32 ∨ r = 64#32) : k1_chk3 t r :=
  of_cases_trip (p := k1_chk3) (by decide) (by decide) t hr
theorem chk4 (t : Fin k1_t3_loop.trips) {r : BitVec 32} (hr : r = 0#32 ∨ r = 64#32) : k1_chk4 t r :=
  of_cases_trip (p := k1_chk4) (by decide) (by decide) t hr
theorem chk5 (t : Fin k1_t3_loop.trips) {r : BitVec 32} (hr : r = 0#32 ∨ r = 64#32) : k1_chk5 t r :=
  of_cases_trip (p := k1_chk5) (by decide) (by decide) t hr
theorem chk6 (t : Fin k1_t3_loop.trips) {r : BitVec 32} (hr : r = 0#32 ∨ r = 64#32) : k1_chk6 t r :=
  of_cases_trip (p := k1_chk6) (by decide) (by decide) t hr
theorem chk7 (t : Fin k1_t3_loop.trips) {r : BitVec 32} (hr : r = 0#32 ∨ r = 64#32) : k1_chk7 t r :=
  of_cases_trip (p := k1_chk7) (by decide) (by decide) t hr
theorem chk8 (t : Fin k1_t3_loop.trips) {r : BitVec 32} (hr : r = 0#32 ∨ r = 64#32) : k1_chk8 t r :=
  of_cases_trip (p := k1_chk8) (by decide) (by decide) t hr
theorem chk9 (t : Fin k1_t3_loop.trips) {r : BitVec 32} (hr : r = 0#32 ∨ r = 64#32) : k1_chk9 t r :=
  of_cases_trip (p := k1_chk9) (by decide) (by decide) t hr
theorem chk10 (t : Fin k1_t3_loop.trips) {r : BitVec 32} (hr : r = 0#32 ∨ r = 64#32) : k1_chk10 t r :=
  of_cases_trip (p := k1_chk10) (by decide) (by decide) t hr
theorem chk11 (t : Fin k1_t3_loop.trips) {r : BitVec 32} (hr : r = 0#32 ∨ r = 64#32) : k1_chk11 t r :=
  of_cases_trip (p := k1_chk11) (by decide) (by decide) t hr
theorem chk12 (t : Fin k1_t3_loop.trips) {r : BitVec 32} (hr : r = 0#32 ∨ r = 64#32) : k1_chk12 t r :=
  of_cases_trip (p := k1_chk12) (by decide) (by decide) t hr
theorem chk13 (t : Fin k1_t3_loop.trips) {r : BitVec 32} (hr : r = 0#32 ∨ r = 64#32) : k1_chk13 t r :=
  of_cases_trip (p := k1_chk13) (by decide) (by decide) t hr
theorem chk14 (t : Fin k1_t3_loop.trips) {r : BitVec 32} (hr : r = 0#32 ∨ r = 64#32) : k1_chk14 t r :=
  of_cases_trip (p := k1_chk14) (by decide) (by decide) t hr
theorem chk15 (t : Fin k1_t3_loop.trips) {r : BitVec 32} (hr : r = 0#32 ∨ r = 64#32) : k1_chk15 t r :=
  of_cases_trip (p := k1_chk15) (by decide) (by decide) t hr
theorem chk16 (t : Fin k1_t3_loop.trips) {r : BitVec 32} (hr : r = 0#32 ∨ r = 64#32) : k1_chk16 t r :=
  of_cases_trip (p := k1_chk16) (by decide) (by decide) t hr
theorem chk17 {r : BitVec 32} (hr : r = 0#32 ∨ r = 64#32) : k1_chk17 r :=
  of_cases (p := k1_chk17) (by decide) (by decide) hr
theorem chk18 {r : BitVec 32} (hr : r = 0#32 ∨ r = 64#32) : k1_chk18 r :=
  of_cases (p := k1_chk18) (by decide) (by decide) hr
theorem chk19 (t : Fin k1_t4_loop.trips) {r : BitVec 32} (hr : r = 0#32 ∨ r = 64#32) : k1_chk19 t r :=
  of_cases_trip (p := k1_chk19) (by decide) (by decide) t hr
theorem chk20 (t : Fin k1_t4_loop.trips) {r : BitVec 32} (hr : r = 0#32 ∨ r = 64#32) : k1_chk20 t r :=
  of_cases_trip (p := k1_chk20) (by decide) (by decide) t hr
theorem chk21 (t : Fin k1_t4_loop.trips) {r : BitVec 32} (hr : r = 0#32 ∨ r = 64#32) : k1_chk21 t r :=
  of_cases_trip (p := k1_chk21) (by decide) (by decide) t hr
theorem chk22 (t : Fin k1_t4_loop.trips) {r : BitVec 32} (hr : r = 0#32 ∨ r = 64#32) : k1_chk22 t r :=
  of_cases_trip (p := k1_chk22) (by decide) (by decide) t hr
theorem chk23 (t : Fin k1_t4_loop.trips) {r : BitVec 32} (hr : r = 0#32 ∨ r = 64#32) : k1_chk23 t r :=
  of_cases_trip (p := k1_chk23) (by decide) (by decide) t hr
theorem chk24 (t : Fin k1_t4_loop.trips) {r : BitVec 32} (hr : r = 0#32 ∨ r = 64#32) : k1_chk24 t r :=
  of_cases_trip (p := k1_chk24) (by decide) (by decide) t hr
theorem chk25 (t : Fin k1_t4_loop.trips) {r : BitVec 32} (hr : r = 0#32 ∨ r = 64#32) : k1_chk25 t r :=
  of_cases_trip (p := k1_chk25) (by decide) (by decide) t hr
theorem chk26 (t : Fin k1_t4_loop.trips) {r : BitVec 32} (hr : r = 0#32 ∨ r = 64#32) : k1_chk26 t r :=
  of_cases_trip (p := k1_chk26) (by decide) (by decide) t hr
theorem chk27 (t : Fin k1_t4_loop.trips) {r : BitVec 32} (hr : r = 0#32 ∨ r = 64#32) : k1_chk27 t r :=
  of_cases_trip (p := k1_chk27) (by decide) (by decide) t hr
theorem chk28 (t : Fin k1_t4_loop.trips) {r : BitVec 32} (hr : r = 0#32 ∨ r = 64#32) : k1_chk28 t r :=
  of_cases_trip (p := k1_chk28) (by decide) (by decide) t hr
theorem chk29 (t : Fin k1_t4_loop.trips) {r : BitVec 32} (hr : r = 0#32 ∨ r = 64#32) : k1_chk29 t r :=
  of_cases_trip (p := k1_chk29) (by decide) (by decide) t hr
theorem chk30 (t : Fin k1_t4_loop.trips) {r : BitVec 32} (hr : r = 0#32 ∨ r = 64#32) : k1_chk30 t r :=
  of_cases_trip (p := k1_chk30) (by decide) (by decide) t hr
theorem chk31 (t : Fin k1_t4_loop.trips) {r : BitVec 32} (hr : r = 0#32 ∨ r = 64#32) : k1_chk31 t r :=
  of_cases_trip (p := k1_chk31) (by decide) (by decide) t hr
theorem chk32 (t : Fin k1_t4_loop.trips) {r : BitVec 32} (hr : r = 0#32 ∨ r = 64#32) : k1_chk32 t r :=
  of_cases_trip (p := k1_chk32) (by decide) (by decide) t hr
theorem chk33 (t : Fin k1_t4_loop.trips) {r : BitVec 32} (hr : r = 0#32 ∨ r = 64#32) : k1_chk33 t r :=
  of_cases_trip (p := k1_chk33) (by decide) (by decide) t hr
theorem chk34 (t : Fin k1_t4_loop.trips) {r : BitVec 32} (hr : r = 0#32 ∨ r = 64#32) : k1_chk34 t r :=
  of_cases_trip (p := k1_chk34) (by decide) (by decide) t hr
theorem chk35 {r : BitVec 32} (hr : r = 0#32 ∨ r = 64#32) : k1_chk35 r :=
  of_cases (p := k1_chk35) (by decide) (by decide) hr
theorem chk36 {r : BitVec 32} (hr : r = 0#32 ∨ r = 64#32) : k1_chk36 r :=
  of_cases (p := k1_chk36) (by decide) (by decide) hr
theorem chk37 (t : Fin k1_t6_loop.trips) {r : BitVec 32} (hr : r = 0#32 ∨ r = 64#32) : k1_chk37 t r :=
  of_cases_trip (p := k1_chk37) (by decide) (by decide) t hr
theorem chk38 (t : Fin k1_t6_loop.trips) {r : BitVec 32} (hr : r = 0#32 ∨ r = 64#32) : k1_chk38 t r :=
  of_cases_trip (p := k1_chk38) (by decide) (by decide) t hr
theorem chk39 (t : Fin k1_t6_loop.trips) {r : BitVec 32} (hr : r = 0#32 ∨ r = 64#32) : k1_chk39 t r :=
  of_cases_trip (p := k1_chk39) (by decide) (by decide) t hr
theorem chk40 (t : Fin k1_t6_loop.trips) {r : BitVec 32} (hr : r = 0#32 ∨ r = 64#32) : k1_chk40 t r :=
  of_cases_trip (p := k1_chk40) (by decide) (by decide) t hr
theorem chk41 (t : Fin k1_t6_loop.trips) {r : BitVec 32} (hr : r = 0#32 ∨ r = 64#32) : k1_chk41 t r :=
  of_cases_trip (p := k1_chk41) (by decide) (by decide) t hr
theorem chk42 (t : Fin k1_t6_loop.trips) {r : BitVec 32} (hr : r = 0#32 ∨ r = 64#32) : k1_chk42 t r :=
  of_cases_trip (p := k1_chk42) (by decide) (by decide) t hr
theorem chk43 (t : Fin k1_t6_loop.trips) {r : BitVec 32} (hr : r = 0#32 ∨ r = 64#32) : k1_chk43 t r :=
  of_cases_trip (p := k1_chk43) (by decide) (by decide) t hr
theorem chk44 (t : Fin k1_t6_loop.trips) {r : BitVec 32} (hr : r = 0#32 ∨ r = 64#32) : k1_chk44 t r :=
  of_cases_trip (p := k1_chk44) (by decide) (by decide) t hr
theorem chk45 (t : Fin k1_t6_loop.trips) {r : BitVec 32} (hr : r = 0#32 ∨ r = 64#32) : k1_chk45 t r :=
  of_cases_trip (p := k1_chk45) (by decide) (by decide) t hr
theorem chk46 (t : Fin k1_t6_loop.trips) {r : BitVec 32} (hr : r = 0#32 ∨ r = 64#32) : k1_chk46 t r :=
  of_cases_trip (p := k1_chk46) (by decide) (by decide) t hr
theorem chk47 (t : Fin k1_t6_loop.trips) {r : BitVec 32} (hr : r = 0#32 ∨ r = 64#32) : k1_chk47 t r :=
  of_cases_trip (p := k1_chk47) (by decide) (by decide) t hr
theorem chk48 (t : Fin k1_t6_loop.trips) {r : BitVec 32} (hr : r = 0#32 ∨ r = 64#32) : k1_chk48 t r :=
  of_cases_trip (p := k1_chk48) (by decide) (by decide) t hr
theorem chk49 (t : Fin k1_t6_loop.trips) {r : BitVec 32} (hr : r = 0#32 ∨ r = 64#32) : k1_chk49 t r :=
  of_cases_trip (p := k1_chk49) (by decide) (by decide) t hr
theorem chk50 (t : Fin k1_t6_loop.trips) {r : BitVec 32} (hr : r = 0#32 ∨ r = 64#32) : k1_chk50 t r :=
  of_cases_trip (p := k1_chk50) (by decide) (by decide) t hr
theorem chk51 (t : Fin k1_t6_loop.trips) {r : BitVec 32} (hr : r = 0#32 ∨ r = 64#32) : k1_chk51 t r :=
  of_cases_trip (p := k1_chk51) (by decide) (by decide) t hr
theorem chk52 (t : Fin k1_t6_loop.trips) {r : BitVec 32} (hr : r = 0#32 ∨ r = 64#32) : k1_chk52 t r :=
  of_cases_trip (p := k1_chk52) (by decide) (by decide) t hr
theorem chk53 {r : BitVec 32} (hr : r = 0#32 ∨ r = 64#32) : k1_chk53 r :=
  of_cases (p := k1_chk53) (by decide) (by decide) hr
theorem chk54 {r : BitVec 32} (hr : r = 0#32 ∨ r = 64#32) : k1_chk54 r :=
  of_cases (p := k1_chk54) (by decide) (by decide) hr
theorem chk55 (t : Fin k1_t7_loop.trips) {r : BitVec 32} (hr : r = 0#32 ∨ r = 64#32) : k1_chk55 t r :=
  of_cases_trip (p := k1_chk55) (by decide) (by decide) t hr
theorem chk56 (t : Fin k1_t7_loop.trips) {r : BitVec 32} (hr : r = 0#32 ∨ r = 64#32) : k1_chk56 t r :=
  of_cases_trip (p := k1_chk56) (by decide) (by decide) t hr
theorem chk57 (t : Fin k1_t7_loop.trips) {r : BitVec 32} (hr : r = 0#32 ∨ r = 64#32) : k1_chk57 t r :=
  of_cases_trip (p := k1_chk57) (by decide) (by decide) t hr
theorem chk58 (t : Fin k1_t7_loop.trips) {r : BitVec 32} (hr : r = 0#32 ∨ r = 64#32) : k1_chk58 t r :=
  of_cases_trip (p := k1_chk58) (by decide) (by decide) t hr
theorem chk59 (t : Fin k1_t7_loop.trips) {r : BitVec 32} (hr : r = 0#32 ∨ r = 64#32) : k1_chk59 t r :=
  of_cases_trip (p := k1_chk59) (by decide) (by decide) t hr
theorem chk60 (t : Fin k1_t7_loop.trips) {r : BitVec 32} (hr : r = 0#32 ∨ r = 64#32) : k1_chk60 t r :=
  of_cases_trip (p := k1_chk60) (by decide) (by decide) t hr
theorem chk61 (t : Fin k1_t7_loop.trips) {r : BitVec 32} (hr : r = 0#32 ∨ r = 64#32) : k1_chk61 t r :=
  of_cases_trip (p := k1_chk61) (by decide) (by decide) t hr
theorem chk62 (t : Fin k1_t7_loop.trips) {r : BitVec 32} (hr : r = 0#32 ∨ r = 64#32) : k1_chk62 t r :=
  of_cases_trip (p := k1_chk62) (by decide) (by decide) t hr
theorem chk63 (t : Fin k1_t7_loop.trips) {r : BitVec 32} (hr : r = 0#32 ∨ r = 64#32) : k1_chk63 t r :=
  of_cases_trip (p := k1_chk63) (by decide) (by decide) t hr
theorem chk64 (t : Fin k1_t7_loop.trips) {r : BitVec 32} (hr : r = 0#32 ∨ r = 64#32) : k1_chk64 t r :=
  of_cases_trip (p := k1_chk64) (by decide) (by decide) t hr
theorem chk65 (t : Fin k1_t7_loop.trips) {r : BitVec 32} (hr : r = 0#32 ∨ r = 64#32) : k1_chk65 t r :=
  of_cases_trip (p := k1_chk65) (by decide) (by decide) t hr
theorem chk66 (t : Fin k1_t7_loop.trips) {r : BitVec 32} (hr : r = 0#32 ∨ r = 64#32) : k1_chk66 t r :=
  of_cases_trip (p := k1_chk66) (by decide) (by decide) t hr
theorem chk67 (t : Fin k1_t7_loop.trips) {r : BitVec 32} (hr : r = 0#32 ∨ r = 64#32) : k1_chk67 t r :=
  of_cases_trip (p := k1_chk67) (by decide) (by decide) t hr
theorem chk68 (t : Fin k1_t7_loop.trips) {r : BitVec 32} (hr : r = 0#32 ∨ r = 64#32) : k1_chk68 t r :=
  of_cases_trip (p := k1_chk68) (by decide) (by decide) t hr
theorem chk69 (t : Fin k1_t7_loop.trips) {r : BitVec 32} (hr : r = 0#32 ∨ r = 64#32) : k1_chk69 t r :=
  of_cases_trip (p := k1_chk69) (by decide) (by decide) t hr
theorem chk70 (t : Fin k1_t7_loop.trips) {r : BitVec 32} (hr : r = 0#32 ∨ r = 64#32) : k1_chk70 t r :=
  of_cases_trip (p := k1_chk70) (by decide) (by decide) t hr
theorem chk71 {r : BitVec 32} (hr : r = 0#32 ∨ r = 64#32) : k1_chk71 r :=
  of_cases (p := k1_chk71) (by decide) (by decide) hr
theorem chk72 {r : BitVec 32} (hr : r = 0#32 ∨ r = 64#32) : k1_chk72 r :=
  of_cases (p := k1_chk72) (by decide) (by decide) hr

end Cert.Proof.TileChk
-- ==== Proof.TileOut.lean ====
/-
  The write-back's destination. A vector subcore's task writes its eight blocks of sixteen rows of the sums two per trip of
  its outer loop: at trip `t` blocks `2 t` and `2 t + 1`. The body slices each out of the sums' array at row
  `256 s + 128 c + 32 t + 16 r` (`s` the subcore, `c` its SparseCore, `r` = 0 or 1), which is row `16 (8 w + 2 t + r)`
  for the worker number `w = 2 s + c`: block `2 t + r` of worker `w`, part `8 w + 2 t + r` of the 256 row parts.
-/
import proofs.«203835_g19404662243951_cont_8to1_399_35_alg».proof.Proof.TilePre

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The outer loop makes four trips. -/
theorem trips_t1 : k1_t1_loop.trips = 4 := by decide

/-- Twice a trip's number, and its successor, name a block of the eight. -/
theorem two_mul_lt (t : Fin k1_t1_loop.trips) : 2 * t.val < 8 := by have := t.isLt; have := trips_t1; omega
theorem two_mul_succ_lt (t : Fin k1_t1_loop.trips) : 2 * t.val + 1 < 8 := by have := t.isLt; have := trips_t1; omega

/-- The even and the odd block of trip `t`, as the body slices them out of the sums' array. -/
abbrev oBlkM0 (L : grid1.Coords) (t : Fin k1_t1_loop.trips) : Memref sig .scVector .hbm S16x64 .f32 :=
  (oV : Memref sig .scVector .hbm S4096x64 .f32).slice (Rect.unit (s := S4096x64) (k1_off59 L t 0#32) S16x64.size (k1_off59_inb L t 0)) (fun _ => rfl)
abbrev oBlkM1 (L : grid1.Coords) (t : Fin k1_t1_loop.trips) : Memref sig .scVector .hbm S16x64 .f32 :=
  (oV : Memref sig .scVector .hbm S4096x64 .f32).slice (Rect.unit (s := S4096x64) (k1_off59 L t 1#32) S16x64.size (k1_off59_inb L t 1)) (fun _ => rfl)

/-- The worker number is twice the subcore's number plus the SparseCore's. -/
theorem wL_val (L : grid1.Coords) : (wL L).val = (L 1).val * 2 + (L 0).val := rfl

/-- The body's rectangle for the even block of trip `t` is row part `8 w + 2 t`, -/
theorem rect0_eq (L : grid1.Coords) (t : Fin k1_t1_loop.trips) :
    Rect.unit (s := S4096x64) (k1_off59 L t 0#32) S16x64.size (k1_off59_inb L t 0) = blk (blkNo (wL L) ⟨2 * t.val, two_mul_lt t⟩) := by
  unfold blk Rect.part Rect.block
  congr 1 <;> funext a
  · rw [show k1_off59 L t 0#32 = _ from k1_off59_eq L t 0]
    match a with
    | 0 => simp [Shape.partIx, Shape.partSize, blkNo, wL_val]; omega
    | 1 => simp [Shape.partIx, Shape.partSize]
  · match a with
    | 0 => simp [Shape.partSize]
    | 1 => simp [Shape.partSize]

/-- and for the odd block row part `8 w + 2 t + 1`. -/
theorem rect1_eq (L : grid1.Coords) (t : Fin k1_t1_loop.trips) :
    Rect.unit (s := S4096x64) (k1_off59 L t 1#32) S16x64.size (k1_off59_inb L t 1) = blk (blkNo (wL L) ⟨2 * t.val + 1, two_mul_succ_lt t⟩) := by
  unfold blk Rect.part Rect.block
  congr 1 <;> funext a
  · rw [show k1_off59 L t 1#32 = _ from k1_off59_eq L t 1]
    match a with
    | 0 => simp [Shape.partIx, Shape.partSize, blkNo, wL_val]; omega
    | 1 => simp [Shape.partIx, Shape.partSize]
  · match a with
    | 0 => simp [Shape.partSize]
    | 1 => simp [Shape.partSize]

/-- So the slices' elements are those blocks'. -/
theorem set_oBlkM0 (L : grid1.Coords) (t : Fin k1_t1_loop.trips) :
    (oBlkM0 L t).view.set = blockSet (blkNo (wL L) ⟨2 * t.val, two_mul_lt t⟩) := by
  show ((oV : Memref sig .scVector .hbm S4096x64 .f32).view.slice (Rect.unit (s := S4096x64) (k1_off59 L t 0#32) S16x64.size (k1_off59_inb L t 0))).set
    = ((oV : Memref sig .scVector .hbm S4096x64 .f32).view.slice (blk (blkNo (wL L) ⟨2 * t.val, two_mul_lt t⟩))).set
  exact rect0_eq L t ▸ rfl
theorem set_oBlkM1 (L : grid1.Coords) (t : Fin k1_t1_loop.trips) :
    (oBlkM1 L t).view.set = blockSet (blkNo (wL L) ⟨2 * t.val + 1, two_mul_succ_lt t⟩) := by
  show ((oV : Memref sig .scVector .hbm S4096x64 .f32).view.slice (Rect.unit (s := S4096x64) (k1_off59 L t 1#32) S16x64.size (k1_off59_inb L t 1))).set
    = ((oV : Memref sig .scVector .hbm S4096x64 .f32).view.slice (blk (blkNo (wL L) ⟨2 * t.val + 1, two_mul_succ_lt t⟩))).set
  exact rect1_eq L t ▸ rfl

/-- The slices held at contents `f` are the blocks of the sums' array held at `f`. -/
theorem pts_oBlkM0 (d : Dev nD) (L : grid1.Coords) (t : Fin k1_t1_loop.trips) (f : Buf (Elt F) (oLoc d)) :
    ((oBlkM0 L t).view.loc (V d (cV L) (jV L)) ↦[(oBlkM0 L t).view.set]{fullShare} f : sProp 𝕄)
      = oLoc d ↦[blockSet (blkNo (wL L) ⟨2 * t.val, two_mul_lt t⟩)]{fullShare} f := by
  rw [set_oBlkM0]
theorem pts_oBlkM1 (d : Dev nD) (L : grid1.Coords) (t : Fin k1_t1_loop.trips) (f : Buf (Elt F) (oLoc d)) :
    ((oBlkM1 L t).view.loc (V d (cV L) (jV L)) ↦[(oBlkM1 L t).view.set]{fullShare} f : sProp 𝕄)
      = oLoc d ↦[blockSet (blkNo (wL L) ⟨2 * t.val + 1, two_mul_succ_lt t⟩)]{fullShare} f := by
  rw [set_oBlkM1]

/-- Eight conjuncts, one by one. -/
theorem bigSep_fin8 (Φ : Fin 8 → sProp 𝕄) :
    bigSep (Finset.univ : Finset (Fin 8)) Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

end Cert.Proof.Bag

end
-- ==== Proof.TileAbbrev.lean ====
/-
  The pieces of a vector subcore's scratches the bag-sum kernel's copies name — the two slots of the rows scratch and of the
  write-back scratch, a bag's list of fifty row numbers, the table as a gather's source — and the two facts about the
  scratches' words its waits and checks rest on: every word of the row-number scratch names a row of the table (`TixB`),
  every word of the column-offset scratch is 0 or 64 (`RvB`).
-/
import proofs.«203835_g19404662243951_cont_8to1_399_35_alg».proof.Proof.TilePre
import proofs.«203835_g19404662243951_cont_8to1_399_35_alg».proof.Proof.Pay
import proofs.«203835_g19404662243951_cont_8to1_399_35_alg».proof.Proof.Tile
import Idealize.ShloMosaic.Lib.Tactic

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid1.Coords)

abbrev listM (o : Fin 1 → Nat) (ho : ∀ a, o a + S50.size a ≤ S2048.size a) : Memref sig .scVector .vmem S50 .i32 :=
  (sTix : Memref sig .scVector .vmem S2048 .i32).slice (Rect.unit (s := S2048) o S50.size ho) (fun _ => rfl)
abbrev h0M : Memref sig .scVector .vmem S50x128 .f32 :=
  ((sRows : Memref sig .scVector .vmem S2x50x128 .f32).slice (Rect.unit (s := S2x50x128) ![0, 0, 0] S1x50x128.size inb_S2x50x128_S1x50x128_0_0_0) (fun _ => rfl)).squeeze S50x128 squeezes_S1x50x128_S50x128
abbrev h1M : Memref sig .scVector .vmem S50x128 .f32 :=
  ((sRows : Memref sig .scVector .vmem S2x50x128 .f32).slice (Rect.unit (s := S2x50x128) ![1, 0, 0] S1x50x128.size inb_S2x50x128_S1x50x128_1_0_0) (fun _ => rfl)).squeeze S50x128 squeezes_S1x50x128_S50x128
abbrev slot0M : Memref sig .scVector .vmem S16x64 .f32 :=
  ((sWb : Memref sig .scVector .vmem S2x16x64 .f32).slice (Rect.unit (s := S2x16x64) ![0, 0, 0] S1x16x64.size inb_S2x16x64_S1x16x64_0_0_0) (fun _ => rfl)).squeeze S16x64 squeezes_S1x16x64_S16x64
abbrev slot1M : Memref sig .scVector .vmem S16x64 .f32 :=
  ((sWb : Memref sig .scVector .vmem S2x16x64 .f32).slice (Rect.unit (s := S2x16x64) ![1, 0, 0] S1x16x64.size inb_S2x16x64_S1x16x64_1_0_0) (fun _ => rfl)).squeeze S16x64 squeezes_S1x16x64_S16x64
abbrev tVM : Memref sig .scVector .hbm S507904x128 .f32 :=
  (tV : Memref sig .scVector .hbm S507904x128 .f32).slice (Rect.unit (s := S507904x128) ![0, 0] S507904x128.size inb_S507904x128_S507904x128_0_0) (fun _ => rfl)

/-- The offset of list `2 k` of the current half, as one word of offsets. -/
def lo (k : Nat) : Fin 1 → Nat := ![min (128 * k) 1024]
theorem lo_inb (k : Nat) : ∀ a, lo k a + S50.size a ≤ S2048.size a := by
  intro a; obtain rfl : a = 0 := Subsingleton.elim _ _
  show min (128 * k) 1024 + 50 ≤ 2048
  omega

/-- Every word of the row-number scratch names a row of the table; every word of the column-offset scratch is 0 or 64. -/
def TixB (g1 : Buf (Elt F) ((sTix : Memref sig .scVector .vmem S2048 .i32).view.loc (thr d L))) : Prop := ∀ i, (g1 i).toNat < 507904
def RvB (g2 : Buf (Elt F) ((sRv : Memref sig .scVector .vmem S2048 .i32).view.loc (thr d L))) : Prop := ∀ i, g2 i = 0#32 ∨ g2 i = 64#32

omit [FloatOps F] [Named F] in
theorem hin_of (g1 : Buf (Elt F) ((sTix : Memref sig .scVector .vmem S2048 .i32).view.loc (thr d L)))
    (hT : TixB d L g1) (o : Fin 1 → Nat) (ho : ∀ a, o a + S50.size a ≤ S2048.size a) (x) :
    ((listM o ho).view.read (Elt F) g1 x).toNat < S507904x128.size (gathers_S507904x128_S50x128).axis := hT _

theorem cond4_lt : ∀ k : Fin k1_t2_loop.trips, k.val < 7 → k1_cond4 k = 1#1 := by decide
theorem cond4_ge : ∀ k : Fin k1_t2_loop.trips, ¬ k.val < 7 → ¬ k1_cond4 k = 1#1 := by decide
theorem cond5_lt : ∀ (t : Fin k1_t1_loop.trips) (k : Fin k1_t2_loop.trips), k.val < 7 → ¬ k1_cond5 t k = 1#1 := by decide
theorem cond5_ge0 : ∀ k : Fin k1_t2_loop.trips, ¬ k.val < 7 → k1_cond5 ⟨0, by decide⟩ k = 1#1 := by decide

omit [FloatOps F] [Named F] d L in
theorem listM_congr {o o' : Fin 1 → Nat} (e : o = o') (ho : ∀ a, o a + S50.size a ≤ S2048.size a) (ho' : ∀ a, o' a + S50.size a ≤ S2048.size a) :
    listM o ho = listM o' ho' := by subst e; rfl
theorem trips2 : k1_t2_loop.trips = 8 := by decide

theorem cond5_ge : ∀ (t : Fin k1_t1_loop.trips) (k : Fin k1_t2_loop.trips), ¬ k.val < 7 → k1_cond5 t k = 1#1 := by decide

end Tile

end Cert.Proof.Bag

end
-- ==== Proof.AccMath.lean ====
/-
  The value of one bag's accumulation: the sixteen-lane accumulators, four of them for the 64 columns, add the gathered
  rows one after the other starting from zero, each row read at its own column offset. When row `j` of the gathered
  rows is the table row of the bag's `j`-th index and its offset is that index's column offset, lane `l` of accumulator
  `i` after `n` rows is the bag's partial sum of `n` terms at column `16 i + l`.
-/
import proofs.«203835_g19404662243951_cont_8to1_399_35_alg».proof.Proof.TileMath

noncomputable section

namespace Cert.Proof.AccMath

open Idealize.ShloMosaic Idealize.ShloMosaic.ValueIdx Cert.Proof.Spec Cert.Proof.TileMath

variable {F : FTy → Type} [FloatOps F]

/-- Column `c` of the accumulation after `n` rows: from zero, row `j` added at its offset `off j`. -/
def accAt (row : Nat → Nat → F .f32) (off : Nat → Nat) (c : Nat) : Nat → F .f32
  | 0 => zeroF
  | n + 1 => FloatOps.addf (accAt row off c n) (row n (off n + c))

/-- The accumulation is the bag's partial sum when the rows are the table rows of the bag's indices and the offsets their
    column offsets. -/
theorem accAt_eq_bagPartial (flat : IVec SFlat 32) (tab : FVec F STab .f32) (b : Nat)
    (row : Nat → Nat → F .f32) (off : Nat → Nat) (c : Nat) (hc : c < 64)
    (hrow : ∀ j, j < 50 → ∀ x, x < 128 → row j x = tabAt tab (trow (flatAt flat (64 * b + j))).toNat x)
    (hoff : ∀ j, j < 50 → off j = (tcol (flatAt flat (64 * b + j))).toNat) :
    ∀ n, n ≤ 50 → accAt row off c n = bagPartial flat tab b c n
  | 0, _ => rfl
  | n + 1, hn => by
    have hlt : n < 50 := hn
    show FloatOps.addf (accAt row off c n) (row n (off n + c)) = FloatOps.addf (bagPartial flat tab b c n) (bagTerm flat tab b c n)
    rw [accAt_eq_bagPartial flat tab b row off c hc hrow hoff n (Nat.le_of_lt hlt), hoff n hlt,
      hrow n hlt _ (tcol_add_lt _ c hc)]
    rfl

/-- The sixteen lanes of accumulator `i` after `n` rows. -/
def accVec (row : Nat → Nat → F .f32) (off : Nat → Nat) (i : Nat) (n : Nat) : FVec F ⟨1, ![16]⟩ .f32 :=
  fun l => accAt row off (16 * i + (l 0).val) n

/-- It starts at the zero vector, -/
theorem accVec_zero (row : Nat → Nat → F .f32) (off : Nat → Nat) (i : Nat) :
    accVec row off i 0 = constant ⟨1, ![16]⟩ .f32 0x00000000#32 := rfl

/-- and each row adds its sixteen lanes at the row's offset plus `16 i`. -/
theorem accVec_succ (row : Nat → Nat → F .f32) (off : Nat → Nat) (i n : Nat) :
    accVec row off i (n + 1) = addf (accVec row off i n) (fun l => row n (off n + (16 * i + (l 0).val))) := rfl

/-- After the fifty rows, accumulator `i` holds the bag's sums at columns `16 i … 16 i + 15`. -/
theorem accVec_final (flat : IVec SFlat 32) (tab : FVec F STab .f32) (b : Fin 4096)
    (row : Nat → Nat → F .f32) (off : Nat → Nat) (i : Fin 4)
    (hrow : ∀ j, j < 50 → ∀ x, x < 128 → row j x = tabAt tab (trow (flatAt flat (64 * b.val + j))).toNat x)
    (hoff : ∀ j, j < 50 → off j = (tcol (flatAt flat (64 * b.val + j))).toNat) (l : (⟨1, ![16]⟩ : Shape).Idx) :
    accVec row off i.val 50 l
      = bagSums flat tab (ix2 b ⟨16 * i.val + (l 0).val, by have := i.isLt; have hl : (l 0).val < 16 := (l 0).isLt; omega⟩) := by
  have hl : (l 0).val < 16 := (l 0).isLt
  exact accAt_eq_bagPartial flat tab b.val row off _ (by have := i.isLt; omega) hrow hoff 50 (Nat.le_refl _)

end Cert.Proof.AccMath

end
-- ==== Proof.TileVal.lean ====
/-
  The values one trip of a pair loop moves, as pure facts of buffers' contents: what a gather of fifty table rows
  lands, what a slot of the rows scratch reads after it, what a sixteen-lane load of a gathered row reads, and the
  facts the loops carry — the row-number and column-offset scratches hold the table rows and column offsets of the
  block's index words, a landed slot holds the table rows of its bag's words, the write-back scratch holds the sums
  of the bags done.
-/
import proofs.«203835_g19404662243951_cont_8to1_399_35_alg».proof.Proof.TileAbbrev
import proofs.«203835_g19404662243951_cont_8to1_399_35_alg».proof.Proof.AccMath
import Idealize.ShloMosaic.Lib.ValueIdx
import Idealize.ShloMosaic.Lib.ValueLayout

noncomputable section

namespace Cert.Proof.Bag

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F] [Named F]

section Tile

variable (d : Dev nD) (L : grid1.Coords)

/-! ## A gather's landing -/

/-- Word `j` of the list at offset `o` of the row-number scratch is word `o + j` of the scratch. -/
theorem list_read (g1 : Buf (Elt F) ((sTix : Memref sig .scVector .vmem S2048 .i32).view.loc (thr d L)))
    (o : Fin 1 → Nat) (ho : ∀ a, o a + S50.size a ≤ S2048.size a) (j : Fin 50) (h : o 0 + j.val < 2048) :
    (listM o ho).view.read (Elt F) g1 (ix1 j) = g1 (ix1 ⟨o 0 + j.val, h⟩) := by
  rw [View.read_apply, cast_eq]
  congr 1
  funext a; apply Fin.ext
  match a with
  | ⟨0, _⟩ => show o 0 + 1 * j.val = o 0 + j.val; omega

/-- Row `j`, column `c` of what a gather of the fifty rows a list names lands: the table at the row the list's `j`-th
    word names. -/
theorem gather_read (tab : FVec F Spec.STab .f32) (idx : S50.Idx → Elt F .i32) (hn : S50.numel = 50)
    (hin : ∀ x, (idx x).toNat < S507904x128.size (gathers_S507904x128_S50x128).axis)
    (j : Fin 50) (c : Fin 128) :
    SparseCore.gatherPayload gathers_S507904x128_S50x128 (tVM.view.read (Elt F) tab) (SparseCore.rows idx hn hin) (ix2 j c)
      = tab (ix2 ⟨(idx (ix1 j)).toNat, hin (ix1 j)⟩ c) := by
  have hrm : S50.rowMajor.symm (j.cast hn.symm) = ix1 j := by
    rw [Equiv.symm_apply_eq]; apply Fin.ext; rw [Shape.rowMajor_val_one]; rfl
  unfold SparseCore.gatherPayload
  rw [View.read_apply, cast_eq]
  congr 1
  funext a; apply Fin.ext
  match a with
  | ⟨0, _⟩ =>
    have h0 := Shape.Gathers.idx_axis gathers_S507904x128_S50x128 (SparseCore.rows idx hn hin) (ix2 j c)
    show 0 + 1 * ((gathers_S507904x128_S50x128.idx (SparseCore.rows idx hn hin) (ix2 j c)) gathers_S507904x128_S50x128.axis).val
      = (idx (ix1 j)).toNat
    rw [h0]
    show 0 + 1 * (idx (S50.rowMajor.symm (j.cast hn.symm))).toNat = _
    rw [hrm]; omega
  | ⟨1, _⟩ =>
    have h1 := Shape.Gathers.idx_of_ne gathers_S507904x128_S50x128 (SparseCore.rows idx hn hin) (ix2 j c) ⟨1, by decide⟩ (by decide)
    show 0 + 1 * ((gathers_S507904x128_S50x128.idx (SparseCore.rows idx hn hin) (ix2 j c)) ⟨1, by decide⟩).val = c.val
    rw [h1]
    show 0 + 1 * c.val = c.val
    omega

/-! ## A slot of the rows scratch after a landing -/

omit [FloatOps F] [Named F] in
theorem ix2_eta {n m : Nat} (x : (⟨2, ![n, m]⟩ : Shape).Idx) : x = ix2 (x 0) (x 1) := by
  funext a
  match a with
  | ⟨0, _⟩ => rfl
  | ⟨1, _⟩ => rfl

omit [FloatOps F] [Named F] in
/-- Entry `(j, c)` of slot 0 is entry `(0, j, c)` of the rows scratch; -/
theorem h0M_emb (j : Fin 50) (c : Fin 128) : (h0M).view.emb (ix2 j c) = ix3 (0 : Fin 2) j c := by
  show (Rect.unit (s := S2x50x128) ![0, 0, 0] S1x50x128.size inb_S2x50x128_S1x50x128_0_0_0).emb
    (Shape.reshapeEquiv squeezes_S1x50x128_S50x128.numel_eq (ix2 j c)) = _
  rw [reshapeEquiv_ix2_1ab]
  funext a; apply Fin.ext
  match a with
  | ⟨0, _⟩ => rfl
  | ⟨1, _⟩ => show 0 + 1 * j.val = j.val; omega
  | ⟨2, _⟩ => show 0 + 1 * c.val = c.val; omega

omit [FloatOps F] [Named F] in
/-- of slot 1, entry `(1, j, c)`. -/
theorem h1M_emb (j : Fin 50) (c : Fin 128) : (h1M).view.emb (ix2 j c) = ix3 (1 : Fin 2) j c := by
  show (Rect.unit (s := S2x50x128) ![1, 0, 0] S1x50x128.size inb_S2x50x128_S1x50x128_1_0_0).emb
    (Shape.reshapeEquiv squeezes_S1x50x128_S50x128.numel_eq (ix2 j c)) = _
  rw [reshapeEquiv_ix2_1ab]
  funext a; apply Fin.ext
  match a with
  | ⟨0, _⟩ => rfl
  | ⟨1, _⟩ => show 0 + 1 * j.val = j.val; omega
  | ⟨2, _⟩ => show 0 + 1 * c.val = c.val; omega

variable (r : Buf (Elt F) ((sRows : Memref sig .scVector .vmem S2x50x128 .f32).view.loc (thr d L)))
  (pay : S50x128.Idx → Elt F .f32)

/-- After a landing in slot 0 the slot reads what landed, -/
theorem write_h0_same (j : Fin 50) (c : Fin 128) :
    View.write (Elt F) (h0M).view r pay Finset.univ (ix3 (0 : Fin 2) j c) = pay (ix2 j c) := by
  rw [← h0M_emb, View.write_emb_of_mem _ _ (Finset.mem_univ _), cast_eq]

/-- and slot 1 what it held. -/
theorem write_h0_other (j : Fin 50) (c : Fin 128) :
    View.write (Elt F) (h0M).view r pay Finset.univ (ix3 (1 : Fin 2) j c) = r (ix3 (1 : Fin 2) j c) := by
  refine View.write_of_not_mem _ _ _ fun hmem => ?_
  obtain ⟨x, -, hx⟩ := Finset.mem_map.mp (show _ ∈ Finset.map _ _ from hmem)
  obtain ⟨x0, x1, rfl⟩ : ∃ (a : Fin 50) (b : Fin 128), x = ix2 a b := ⟨x 0, x 1, ix2_eta x⟩
  rw [h0M_emb] at hx
  have h0 := congrArg (fun i : S2x50x128.Idx => (i 0).val) hx
  exact absurd h0 (show ¬ ((_ : ℕ) = _) from by simp [ix3])

/-- After a landing in slot 1 the slot reads what landed, -/
theorem write_h1_same (j : Fin 50) (c : Fin 128) :
    View.write (Elt F) (h1M).view r pay Finset.univ (ix3 (1 : Fin 2) j c) = pay (ix2 j c) := by
  rw [← h1M_emb, View.write_emb_of_mem _ _ (Finset.mem_univ _), cast_eq]

/-- and slot 0 what it held. -/
theorem write_h1_other (j : Fin 50) (c : Fin 128) :
    View.write (Elt F) (h1M).view r pay Finset.univ (ix3 (0 : Fin 2) j c) = r (ix3 (0 : Fin 2) j c) := by
  refine View.write_of_not_mem _ _ _ fun hmem => ?_
  obtain ⟨x, -, hx⟩ := Finset.mem_map.mp (show _ ∈ Finset.map _ _ from hmem)
  obtain ⟨x0, x1, rfl⟩ : ∃ (a : Fin 50) (b : Fin 128), x = ix2 a b := ⟨x 0, x 1, ix2_eta x⟩
  rw [h1M_emb] at hx
  have h0 := congrArg (fun i : S2x50x128.Idx => (i 0).val) hx
  exact absurd h0 (show ¬ ((_ : ℕ) = _) from by simp [ix3])

/-! ## A sixteen-lane load of a gathered row -/

/-- A load of sixteen lanes of the rows scratch at offsets `(sl, row, col)` reads, at lane `l`, the scratch at
    `(sl, row, col + l)`. -/
theorem rows_load (off : Fin 3 → Nat) (inb : ∀ a, off a + S1x1x16.size a ≤ S2x50x128.size a) (l : S1x1x16.Idx) :
    (sRows : Memref sig .scVector .vmem S2x50x128 .f32).view.readAt (Elt F) (Rect.unit (s := S2x50x128) off S1x1x16.size inb).toLoadRect r l
      = r (ix3 (⟨off 0, by have := inb 0; change off 0 + 1 ≤ 2 at this; omega⟩ : Fin 2)
            (⟨off 1, by have := inb 1; change off 1 + 1 ≤ 50 at this; omega⟩ : Fin 50)
            (⟨off 2 + (l 2).val, by have := inb 2; change off 2 + 16 ≤ 128 at this; have hl : (l 2).val < 16 := (l 2).isLt; omega⟩ : Fin 128)) := by
  have h0 : (l 0).val = 0 := by have : (l 0).val < 1 := (l 0).isLt; omega
  have h1 : (l 1).val = 0 := by have : (l 1).val < 1 := (l 1).isLt; omega
  rw [View.readAt_apply, View.read_apply, cast_eq]
  congr 1
  funext a; apply Fin.ext
  match a with
  | ⟨0, _⟩ => show off 0 + 1 * (l 0).val = off 0; rw [h0]; omega
  | ⟨1, _⟩ => show off 1 + 1 * (l 1).val = off 1; rw [h1]; omega
  | ⟨2, _⟩ => show off 2 + 1 * (l 2).val = off 2 + (l 2).val; omega

/-! ## The offsets of the accumulate's loads

Each sixteen-lane load of a gathered row is at a slot, a row — sixteen times the group's number plus the row's place in the
group, or row 48 or 49 after the groups — and the row's column offset word plus sixteen times the accumulator's number. -/

section Offs
theorem k1_off9_form (k1_t3 : Fin k1_t3_loop.trips) (v1667 c0_i32_693 : BitVec 32) :
    k1_off9 k1_t3 v1667 c0_i32_693 = ![0, 16 * k1_t3.val + 0, (v1667 + c0_i32_693).toNat] := by
  funext a
  match a with
  | ⟨0, _⟩ => rfl
  | ⟨1, _⟩ => exact (show ∀ k1_t3 : Fin k1_t3_loop.trips, k1_off9 k1_t3 0#32 0#32 1 = 16 * k1_t3.val + 0 from by decide +kernel) k1_t3
  | ⟨2, _⟩ => rfl

theorem k1_off10_form (k1_t3 : Fin k1_t3_loop.trips) (v1703 c0_i32_703 : BitVec 32) :
    k1_off10 k1_t3 v1703 c0_i32_703 = ![0, 16 * k1_t3.val + 1, (v1703 + c0_i32_703).toNat] := by
  funext a
  match a with
  | ⟨0, _⟩ => rfl
  | ⟨1, _⟩ => exact (show ∀ k1_t3 : Fin k1_t3_loop.trips, k1_off10 k1_t3 0#32 0#32 1 = 16 * k1_t3.val + 1 from by decide +kernel) k1_t3
  | ⟨2, _⟩ => rfl

theorem k1_off11_form (k1_t3 : Fin k1_t3_loop.trips) (v1739 c0_i32_713 : BitVec 32) :
    k1_off11 k1_t3 v1739 c0_i32_713 = ![0, 16 * k1_t3.val + 2, (v1739 + c0_i32_713).toNat] := by
  funext a
  match a with
  | ⟨0, _⟩ => rfl
  | ⟨1, _⟩ => exact (show ∀ k1_t3 : Fin k1_t3_loop.trips, k1_off11 k1_t3 0#32 0#32 1 = 16 * k1_t3.val + 2 from by decide +kernel) k1_t3
  | ⟨2, _⟩ => rfl

theorem k1_off12_form (k1_t3 : Fin k1_t3_loop.trips) (v1775 c0_i32_723 : BitVec 32) :
    k1_off12 k1_t3 v1775 c0_i32_723 = ![0, 16 * k1_t3.val + 3, (v1775 + c0_i32_723).toNat] := by
  funext a
  match a with
  | ⟨0, _⟩ => rfl
  | ⟨1, _⟩ => exact (show ∀ k1_t3 : Fin k1_t3_loop.trips, k1_off12 k1_t3 0#32 0#32 1 = 16 * k1_t3.val + 3 from by decide +kernel) k1_t3
  | ⟨2, _⟩ => rfl

theorem k1_off13_form (k1_t3 : Fin k1_t3_loop.trips) (v1811 c0_i32_733 : BitVec 32) :
    k1_off13 k1_t3 v1811 c0_i32_733 = ![0, 16 * k1_t3.val + 4, (v1811 + c0_i32_733).toNat] := by
  funext a
  match a with
  | ⟨0, _⟩ => rfl
  | ⟨1, _⟩ => exact (show ∀ k1_t3 : Fin k1_t3_loop.trips, k1_off13 k1_t3 0#32 0#32 1 = 16 * k1_t3.val + 4 from by decide +kernel) k1_t3
  | ⟨2, _⟩ => rfl

theorem k1_off14_form (k1_t3 : Fin k1_t3_loop.trips) (v1847 c0_i32_742 : BitVec 32) :
    k1_off14 k1_t3 v1847 c0_i32_742 = ![0, 16 * k1_t3.val + 5, (v1847 + c0_i32_742).toNat] := by
  funext a
  match a with
  | ⟨0, _⟩ => rfl
  | ⟨1, _⟩ => exact (show ∀ k1_t3 : Fin k1_t3_loop.trips, k1_off14 k1_t3 0#32 0#32 1 = 16 * k1_t3.val + 5 from by decide +kernel) k1_t3
  | ⟨2, _⟩ => rfl

theorem k1_off15_form (k1_t3 : Fin k1_t3_loop.trips) (v1883 c0_i32_752 : BitVec 32) :
    k1_off15 k1_t3 v1883 c0_i32_752 = ![0, 16 * k1_t3.val + 6, (v1883 + c0_i32_752).toNat] := by
  funext a
  match a with
  | ⟨0, _⟩ => rfl
  | ⟨1, _⟩ => exact (show ∀ k1_t3 : Fin k1_t3_loop.trips, k1_off15 k1_t3 0#32 0#32 1 = 16 * k1_t3.val + 6 from by decide +kernel) k1_t3
  | ⟨2, _⟩ => rfl

theorem k1_off16_form (k1_t3 : Fin k1_t3_loop.trips) (v1919 c0_i32_762 : BitVec 32) :
    k1_off16 k1_t3 v1919 c0_i32_762 = ![0, 16 * k1_t3.val + 7, (v1919 + c0_i32_762).toNat] := by
  funext a
  match a with
  | ⟨0, _⟩ => rfl
  | ⟨1, _⟩ => exact (show ∀ k1_t3 : Fin k1_t3_loop.trips, k1_off16 k1_t3 0#32 0#32 1 = 16 * k1_t3.val + 7 from by decide +kernel) k1_t3
  | ⟨2, _⟩ => rfl

theorem k1_off17_form (k1_t3 : Fin k1_t3_loop.trips) (v1955 c0_i32_772 : BitVec 32) :
    k1_off17 k1_t3 v1955 c0_i32_772 = ![0, 16 * k1_t3.val + 8, (v1955 + c0_i32_772).toNat] := by
  funext a
  match a with
  | ⟨0, _⟩ => rfl
  | ⟨1, _⟩ => exact (show ∀ k1_t3 : Fin k1_t3_loop.trips, k1_off17 k1_t3 0#32 0#32 1 = 16 * k1_t3.val + 8 from by decide +kernel) k1_t3
  | ⟨2, _⟩ => rfl

theorem k1_off18_form (k1_t3 : Fin k1_t3_loop.trips) (v1991 c0_i32_781 : BitVec 32) :
    k1_off18 k1_t3 v1991 c0_i32_781 = ![0, 16 * k1_t3.val + 9, (v1991 + c0_i32_781).toNat] := by
  funext a
  match a with
  | ⟨0, _⟩ => rfl
  | ⟨1, _⟩ => exact (show ∀ k1_t3 : Fin k1_t3_loop.trips, k1_off18 k1_t3 0#32 0#32 1 = 16 * k1_t3.val + 9 from by decide +kernel) k1_t3
  | ⟨2, _⟩ => rfl

theorem k1_off19_form (k1_t3 : Fin k1_t3_loop.trips) (v2027 c0_i32_790 : BitVec 32) :
    k1_off19 k1_t3 v2027 c0_i32_790 = ![0, 16 * k1_t3.val + 10, (v2027 + c0_i32_790).toNat] := by
  funext a
  match a with
  | ⟨0, _⟩ => rfl
  | ⟨1, _⟩ => exact (show ∀ k1_t3 : Fin k1_t3_loop.trips, k1_off19 k1_t3 0#32 0#32 1 = 16 * k1_t3.val + 10 from by decide +kernel) k1_t3
  | ⟨2, _⟩ => rfl

theorem k1_off20_form (k1_t3 : Fin k1_t3_loop.trips) (v2063 c0_i32_799 : BitVec 32) :
    k1_off20 k1_t3 v2063 c0_i32_799 = ![0, 16 * k1_t3.val + 11, (v2063 + c0_i32_799).toNat] := by
  funext a
  match a with
  | ⟨0, _⟩ => rfl
  | ⟨1, _⟩ => exact (show ∀ k1_t3 : Fin k1_t3_loop.trips, k1_off20 k1_t3 0#32 0#32 1 = 16 * k1_t3.val + 11 from by decide +kernel) k1_t3
  | ⟨2, _⟩ => rfl

theorem k1_off21_form (k1_t3 : Fin k1_t3_loop.trips) (v2099 c0_i32_808 : BitVec 32) :
    k1_off21 k1_t3 v2099 c0_i32_808 = ![0, 16 * k1_t3.val + 12, (v2099 + c0_i32_808).toNat] := by
  funext a
  match a with
  | ⟨0, _⟩ => rfl
  | ⟨1, _⟩ => exact (show ∀ k1_t3 : Fin k1_t3_loop.trips, k1_off21 k1_t3 0#32 0#32 1 = 16 * k1_t3.val + 12 from by decide +kernel) k1_t3
  | ⟨2, _⟩ => rfl

theorem k1_off22_form (k1_t3 : Fin k1_t3_loop.trips) (v2135 c0_i32_817 : BitVec 32) :
    k1_off22 k1_t3 v2135 c0_i32_817 = ![0, 16 * k1_t3.val + 13, (v2135 + c0_i32_817).toNat] := by
  funext a
  match a with
  | ⟨0, _⟩ => rfl
  | ⟨1, _⟩ => exact (show ∀ k1_t3 : Fin k1_t3_loop.trips, k1_off22 k1_t3 0#32 0#32 1 = 16 * k1_t3.val + 13 from by decide +kernel) k1_t3
  | ⟨2, _⟩ => rfl

theorem k1_off23_form (k1_t3 : Fin k1_t3_loop.trips) (v2171 c0_i32_826 : BitVec 32) :
    k1_off23 k1_t3 v2171 c0_i32_826 = ![0, 16 * k1_t3.val + 14, (v2171 + c0_i32_826).toNat] := by
  funext a
  match a with
  | ⟨0, _⟩ => rfl
  | ⟨1, _⟩ => exact (show ∀ k1_t3 : Fin k1_t3_loop.trips, k1_off23 k1_t3 0#32 0#32 1 = 16 * k1_t3.val + 14 from by decide +kernel) k1_t3
  | ⟨2, _⟩ => rfl

theorem k1_off24_form (k1_t3 : Fin k1_t3_loop.trips) (v2207 c0_i32_835 : BitVec 32) :
    k1_off24 k1_t3 v2207 c0_i32_835 = ![0, 16 * k1_t3.val + 15, (v2207 + c0_i32_835).toNat] := by
  funext a
  match a with
  | ⟨0, _⟩ => rfl
  | ⟨1, _⟩ => exact (show ∀ k1_t3 : Fin k1_t3_loop.trips, k1_off24 k1_t3 0#32 0#32 1 = 16 * k1_t3.val + 15 from by decide +kernel) k1_t3
  | ⟨2, _⟩ => rfl

theorem k1_off26_form (v1456 c0_i32_605 : BitVec 32) :
    k1_off26 v1456 c0_i32_605 = ![0, 48, (v1456 + c0_i32_605).toNat] := by
  funext a
  match a with
  | ⟨0, _⟩ => rfl
  | ⟨1, _⟩ => exact rfl
  | ⟨2, _⟩ => rfl

theorem k1_off27_form (v1490 c0_i32_616 : BitVec 32) :
    k1_off27 v1490 c0_i32_616 = ![0, 49, (v1490 + c0_i32_616).toNat] := by
  funext a
  match a with
  | ⟨0, _⟩ => rfl
  | ⟨1, _⟩ => exact rfl
  | ⟨2, _⟩ => rfl

theorem k1_off36_form (k1_t4 : Fin k1_t4_loop.trips) (v1667 c0_i32_693 : BitVec 32) :
    k1_off36 k1_t4 v1667 c0_i32_693 = ![1, 16 * k1_t4.val + 0, (v1667 + c0_i32_693).toNat] := by
  funext a
  match a with
  | ⟨0, _⟩ => rfl
  | ⟨1, _⟩ => exact (show ∀ k1_t4 : Fin k1_t4_loop.trips, k1_off36 k1_t4 0#32 0#32 1 = 16 * k1_t4.val + 0 from by decide +kernel) k1_t4
  | ⟨2, _⟩ => rfl

theorem k1_off37_form (k1_t4 : Fin k1_t4_loop.trips) (v1703 c0_i32_703 : BitVec 32) :
    k1_off37 k1_t4 v1703 c0_i32_703 = ![1, 16 * k1_t4.val + 1, (v1703 + c0_i32_703).toNat] := by
  funext a
  match a with
  | ⟨0, _⟩ => rfl
  | ⟨1, _⟩ => exact (show ∀ k1_t4 : Fin k1_t4_loop.trips, k1_off37 k1_t4 0#32 0#32 1 = 16 * k1_t4.val + 1 from by decide +kernel) k1_t4
  | ⟨2, _⟩ => rfl

theorem k1_off38_form (k1_t4 : Fin k1_t4_loop.trips) (v1739 c0_i32_713 : BitVec 32) :
    k1_off38 k1_t4 v1739 c0_i32_713 = ![1, 16 * k1_t4.val + 2, (v1739 + c0_i32_713).toNat] := by
  funext a
  match a with
  | ⟨0, _⟩ => rfl
  | ⟨1, _⟩ => exact (show ∀ k1_t4 : Fin k1_t4_loop.trips, k1_off38 k1_t4 0#32 0#32 1 = 16 * k1_t4.val + 2 from by decide +kernel) k1_t4
  | ⟨2, _⟩ => rfl

theorem k1_off39_form (k1_t4 : Fin k1_t4_loop.trips) (v1775 c0_i32_723 : BitVec 32) :
    k1_off39 k1_t4 v1775 c0_i32_723 = ![1, 16 * k1_t4.val + 3, (v1775 + c0_i32_723).toNat] := by
  funext a
  match a with
  | ⟨0, _⟩ => rfl
  | ⟨1, _⟩ => exact (show ∀ k1_t4 : Fin k1_t4_loop.trips, k1_off39 k1_t4 0#32 0#32 1 = 16 * k1_t4.val + 3 from by decide +kernel) k1_t4
  | ⟨2, _⟩ => rfl

theorem k1_off40_form (k1_t4 : Fin k1_t4_loop.trips) (v1811 c0_i32_733 : BitVec 32) :
    k1_off40 k1_t4 v1811 c0_i32_733 = ![1, 16 * k1_t4.val + 4, (v1811 + c0_i32_733).toNat] := by
  funext a
  match a with
  | ⟨0, _⟩ => rfl
  | ⟨1, _⟩ => exact (show ∀ k1_t4 : Fin k1_t4_loop.trips, k1_off40 k1_t4 0#32 0#32 1 = 16 * k1_t4.val + 4 from by decide +kernel) k1_t4
  | ⟨2, _⟩ => rfl

theorem k1_off41_form (k1_t4 : Fin k1_t4_loop.trips) (v1847 c0_i32_742 : BitVec 32) :
    k1_off41 k1_t4 v1847 c0_i32_742 = ![1, 16 * k1_t4.val + 5, (v1847 + c0_i32_742).toNat] := by
  funext a
  match a with
  | ⟨0, _⟩ => rfl
  | ⟨1, _⟩ => exact (show ∀ k1_t4 : Fin k1_t4_loop.trips, k1_off41 k1_t4 0#32 0#32 1 = 16 * k1_t4.val + 5 from by decide +kernel) k1_t4
  | ⟨2, _⟩ => rfl

theorem k1_off42_form (k1_t4 : Fin k1_t4_loop.trips) (v1883 c0_i32_752 : BitVec 32) :
    k1_off42 k1_t4 v1883 c0_i32_752 = ![1, 16 * k1_t4.val + 6, (v1883 + c0_i32_752).toNat] := by
  funext a
  match a with
  | ⟨0, _⟩ => rfl
  | ⟨1, _⟩ => exact (show ∀ k1_t4 : Fin k1_t4_loop.trips, k1_off42 k1_t4 0#32 0#32 1 = 16 * k1_t4.val + 6 from by decide +kernel) k1_t4
  | ⟨2, _⟩ => rfl

theorem k1_off43_form (k1_t4 : Fin k1_t4_loop.trips) (v1919 c0_i32_762 : BitVec 32) :
    k1_off43 k1_t4 v1919 c0_i32_762 = ![1, 16 * k1_t4.val + 7, (v1919 + c0_i32_762).toNat] := by
  funext a
  match a with
  | ⟨0, _⟩ => rfl
  | ⟨1, _⟩ => exact (show ∀ k1_t4 : Fin k1_t4_loop.trips, k1_off43 k1_t4 0#32 0#32 1 = 16 * k1_t4.val + 7 from by decide +kernel) k1_t4
  | ⟨2, _⟩ => rfl

theorem k1_off44_form (k1_t4 : Fin k1_t4_loop.trips) (v1955 c0_i32_772 : BitVec 32) :
    k1_off44 k1_t4 v1955 c0_i32_772 = ![1, 16 * k1_t4.val + 8, (v1955 + c0_i32_772).toNat] := by
  funext a
  match a with
  | ⟨0, _⟩ => rfl
  | ⟨1, _⟩ => exact (show ∀ k1_t4 : Fin k1_t4_loop.trips, k1_off44 k1_t4 0#32 0#32 1 = 16 * k1_t4.val + 8 from by decide +kernel) k1_t4
  | ⟨2, _⟩ => rfl

theorem k1_off45_form (k1_t4 : Fin k1_t4_loop.trips) (v1991 c0_i32_781 : BitVec 32) :
    k1_off45 k1_t4 v1991 c0_i32_781 = ![1, 16 * k1_t4.val + 9, (v1991 + c0_i32_781).toNat] := by
  funext a
  match a with
  | ⟨0, _⟩ => rfl
  | ⟨1, _⟩ => exact (show ∀ k1_t4 : Fin k1_t4_loop.trips, k1_off45 k1_t4 0#32 0#32 1 = 16 * k1_t4.val + 9 from by decide +kernel) k1_t4
  | ⟨2, _⟩ => rfl

theorem k1_off46_form (k1_t4 : Fin k1_t4_loop.trips) (v2027 c0_i32_790 : BitVec 32) :
    k1_off46 k1_t4 v2027 c0_i32_790 = ![1, 16 * k1_t4.val + 10, (v2027 + c0_i32_790).toNat] := by
  funext a
  match a with
  | ⟨0, _⟩ => rfl
  | ⟨1, _⟩ => exact (show ∀ k1_t4 : Fin k1_t4_loop.trips, k1_off46 k1_t4 0#32 0#32 1 = 16 * k1_t4.val + 10 from by decide +kernel) k1_t4
  | ⟨2, _⟩ => rfl

theorem k1_off47_form (k1_t4 : Fin k1_t4_loop.trips) (v2063 c0_i32_799 : BitVec 32) :
    k1_off47 k1_t4 v2063 c0_i32_799 = ![1, 16 * k1_t4.val + 11, (v2063 + c0_i32_799).toNat] := by
  funext a
  match a with
  | ⟨0, _⟩ => rfl
  | ⟨1, _⟩ => exact (show ∀ k1_t4 : Fin k1_t4_loop.trips, k1_off47 k1_t4 0#32 0#32 1 = 16 * k1_t4.val + 11 from by decide +kernel) k1_t4
  | ⟨2, _⟩ => rfl

theorem k1_off48_form (k1_t4 : Fin k1_t4_loop.trips) (v2099 c0_i32_808 : BitVec 32) :
    k1_off48 k1_t4 v2099 c0_i32_808 = ![1, 16 * k1_t4.val + 12, (v2099 + c0_i32_808).toNat] := by
  funext a
  match a with
  | ⟨0, _⟩ => rfl
  | ⟨1, _⟩ => exact (show ∀ k1_t4 : Fin k1_t4_loop.trips, k1_off48 k1_t4 0#32 0#32 1 = 16 * k1_t4.val + 12 from by decide +kernel) k1_t4
  | ⟨2, _⟩ => rfl

theorem k1_off49_form (k1_t4 : Fin k1_t4_loop.trips) (v2135 c0_i32_817 : BitVec 32) :
    k1_off49 k1_t4 v2135 c0_i32_817 = ![1, 16 * k1_t4.val + 13, (v2135 + c0_i32_817).toNat] := by
  funext a
  match a with
  | ⟨0, _⟩ => rfl
  | ⟨1, _⟩ => exact (show ∀ k1_t4 : Fin k1_t4_loop.trips, k1_off49 k1_t4 0#32 0#32 1 = 16 * k1_t4.val + 13 from by decide +kernel) k1_t4
  | ⟨2, _⟩ => rfl

theorem k1_off50_form (k1_t4 : Fin k1_t4_loop.trips) (v2171 c0_i32_826 : BitVec 32) :
    k1_off50 k1_t4 v2171 c0_i32_826 = ![1, 16 * k1_t4.val + 14, (v2171 + c0_i32_826).toNat] := by
  funext a
  match a with
  | ⟨0, _⟩ => rfl
  | ⟨1, _⟩ => exact (show ∀ k1_t4 : Fin k1_t4_loop.trips, k1_off50 k1_t4 0#32 0#32 1 = 16 * k1_t4.val + 14 from by decide +kernel) k1_t4
  | ⟨2, _⟩ => rfl

theorem k1_off51_form (k1_t4 : Fin k1_t4_loop.trips) (v2207 c0_i32_835 : BitVec 32) :
    k1_off51 k1_t4 v2207 c0_i32_835 = ![1, 16 * k1_t4.val + 15, (v2207 + c0_i32_835).toNat] := by
  funext a
  match a with
  | ⟨0, _⟩ => rfl
  | ⟨1, _⟩ => exact (show ∀ k1_t4 : Fin k1_t4_loop.trips, k1_off51 k1_t4 0#32 0#32 1 = 16 * k1_t4.val + 15 from by decide +kernel) k1_t4
  | ⟨2, _⟩ => rfl

theorem k1_off53_form (v1572 c0_i32_658 : BitVec 32) :
    k1_off53 v1572 c0_i32_658 = ![1, 48, (v1572 + c0_i32_658).toNat] := by
  funext a
  match a with
  | ⟨0, _⟩ => rfl
  | ⟨1, _⟩ => exact rfl
  | ⟨2, _⟩ => rfl

theorem k1_off54_form (v1606 c0_i32_670 : BitVec 32) :
    k1_off54 v1606 c0_i32_670 = ![1, 49, (v1606 + c0_i32_670).toNat] := by
  funext a
  match a with
  | ⟨0, _⟩ => rfl
  | ⟨1, _⟩ => exact rfl
  | ⟨2, _⟩ => rfl

theorem k1_off66_form (k1_t6 : Fin k1_t6_loop.trips) (v1667 c0_i32_693 : BitVec 32) :
    k1_off66 k1_t6 v1667 c0_i32_693 = ![0, 16 * k1_t6.val + 0, (v1667 + c0_i32_693).toNat] := by
  funext a
  match a with
  | ⟨0, _⟩ => rfl
  | ⟨1, _⟩ => exact (show ∀ k1_t6 : Fin k1_t6_loop.trips, k1_off66 k1_t6 0#32 0#32 1 = 16 * k1_t6.val + 0 from by decide +kernel) k1_t6
  | ⟨2, _⟩ => rfl

theorem k1_off67_form (k1_t6 : Fin k1_t6_loop.trips) (v1703 c0_i32_703 : BitVec 32) :
    k1_off67 k1_t6 v1703 c0_i32_703 = ![0, 16 * k1_t6.val + 1, (v1703 + c0_i32_703).toNat] := by
  funext a
  match a with
  | ⟨0, _⟩ => rfl
  | ⟨1, _⟩ => exact (show ∀ k1_t6 : Fin k1_t6_loop.trips, k1_off67 k1_t6 0#32 0#32 1 = 16 * k1_t6.val + 1 from by decide +kernel) k1_t6
  | ⟨2, _⟩ => rfl

theorem k1_off68_form (k1_t6 : Fin k1_t6_loop.trips) (v1739 c0_i32_713 : BitVec 32) :
    k1_off68 k1_t6 v1739 c0_i32_713 = ![0, 16 * k1_t6.val + 2, (v1739 + c0_i32_713).toNat] := by
  funext a
  match a with
  | ⟨0, _⟩ => rfl
  | ⟨1, _⟩ => exact (show ∀ k1_t6 : Fin k1_t6_loop.trips, k1_off68 k1_t6 0#32 0#32 1 = 16 * k1_t6.val + 2 from by decide +kernel) k1_t6
  | ⟨2, _⟩ => rfl

theorem k1_off69_form (k1_t6 : Fin k1_t6_loop.trips) (v1775 c0_i32_723 : BitVec 32) :
    k1_off69 k1_t6 v1775 c0_i32_723 = ![0, 16 * k1_t6.val + 3, (v1775 + c0_i32_723).toNat] := by
  funext a
  match a with
  | ⟨0, _⟩ => rfl
  | ⟨1, _⟩ => exact (show ∀ k1_t6 : Fin k1_t6_loop.trips, k1_off69 k1_t6 0#32 0#32 1 = 16 * k1_t6.val + 3 from by decide +kernel) k1_t6
  | ⟨2, _⟩ => rfl

theorem k1_off70_form (k1_t6 : Fin k1_t6_loop.trips) (v1811 c0_i32_733 : BitVec 32) :
    k1_off70 k1_t6 v1811 c0_i32_733 = ![0, 16 * k1_t6.val + 4, (v1811 + c0_i32_733).toNat] := by
  funext a
  match a with
  | ⟨0, _⟩ => rfl
  | ⟨1, _⟩ => exact (show ∀ k1_t6 : Fin k1_t6_loop.trips, k1_off70 k1_t6 0#32 0#32 1 = 16 * k1_t6.val + 4 from by decide +kernel) k1_t6
  | ⟨2, _⟩ => rfl

theorem k1_off71_form (k1_t6 : Fin k1_t6_loop.trips) (v1847 c0_i32_742 : BitVec 32) :
    k1_off71 k1_t6 v1847 c0_i32_742 = ![0, 16 * k1_t6.val + 5, (v1847 + c0_i32_742).toNat] := by
  funext a
  match a with
  | ⟨0, _⟩ => rfl
  | ⟨1, _⟩ => exact (show ∀ k1_t6 : Fin k1_t6_loop.trips, k1_off71 k1_t6 0#32 0#32 1 = 16 * k1_t6.val + 5 from by decide +kernel) k1_t6
  | ⟨2, _⟩ => rfl

theorem k1_off72_form (k1_t6 : Fin k1_t6_loop.trips) (v1883 c0_i32_752 : BitVec 32) :
    k1_off72 k1_t6 v1883 c0_i32_752 = ![0, 16 * k1_t6.val + 6, (v1883 + c0_i32_752).toNat] := by
  funext a
  match a with
  | ⟨0, _⟩ => rfl
  | ⟨1, _⟩ => exact (show ∀ k1_t6 : Fin k1_t6_loop.trips, k1_off72 k1_t6 0#32 0#32 1 = 16 * k1_t6.val + 6 from by decide +kernel) k1_t6
  | ⟨2, _⟩ => rfl

theorem k1_off73_form (k1_t6 : Fin k1_t6_loop.trips) (v1919 c0_i32_762 : BitVec 32) :
    k1_off73 k1_t6 v1919 c0_i32_762 = ![0, 16 * k1_t6.val + 7, (v1919 + c0_i32_762).toNat] := by
  funext a
  match a with
  | ⟨0, _⟩ => rfl
  | ⟨1, _⟩ => exact (show ∀ k1_t6 : Fin k1_t6_loop.trips, k1_off73 k1_t6 0#32 0#32 1 = 16 * k1_t6.val + 7 from by decide +kernel) k1_t6
  | ⟨2, _⟩ => rfl

theorem k1_off74_form (k1_t6 : Fin k1_t6_loop.trips) (v1955 c0_i32_772 : BitVec 32) :
    k1_off74 k1_t6 v1955 c0_i32_772 = ![0, 16 * k1_t6.val + 8, (v1955 + c0_i32_772).toNat] := by
  funext a
  match a with
  | ⟨0, _⟩ => rfl
  | ⟨1, _⟩ => exact (show ∀ k1_t6 : Fin k1_t6_loop.trips, k1_off74 k1_t6 0#32 0#32 1 = 16 * k1_t6.val + 8 from by decide +kernel) k1_t6
  | ⟨2, _⟩ => rfl

theorem k1_off75_form (k1_t6 : Fin k1_t6_loop.trips) (v1991 c0_i32_781 : BitVec 32) :
    k1_off75 k1_t6 v1991 c0_i32_781 = ![0, 16 * k1_t6.val + 9, (v1991 + c0_i32_781).toNat] := by
  funext a
  match a with
  | ⟨0, _⟩ => rfl
  | ⟨1, _⟩ => exact (show ∀ k1_t6 : Fin k1_t6_loop.trips, k1_off75 k1_t6 0#32 0#32 1 = 16 * k1_t6.val + 9 from by decide +kernel) k1_t6
  | ⟨2, _⟩ => rfl

theorem k1_off76_form (k1_t6 : Fin k1_t6_loop.trips) (v2027 c0_i32_790 : BitVec 32) :
    k1_off76 k1_t6 v2027 c0_i32_790 = ![0, 16 * k1_t6.val + 10, (v2027 + c0_i32_790).toNat] := by
  funext a
  match a with
  | ⟨0, _⟩ => rfl
  | ⟨1, _⟩ => exact (show ∀ k1_t6 : Fin k1_t6_loop.trips, k1_off76 k1_t6 0#32 0#32 1 = 16 * k1_t6.val + 10 from by decide +kernel) k1_t6
  | ⟨2, _⟩ => rfl

theorem k1_off77_form (k1_t6 : Fin k1_t6_loop.trips) (v2063 c0_i32_799 : BitVec 32) :
    k1_off77 k1_t6 v2063 c0_i32_799 = ![0, 16 * k1_t6.val + 11, (v2063 + c0_i32_799).toNat] := by
  funext a
  match a with
  | ⟨0, _⟩ => rfl
  | ⟨1, _⟩ => exact (show ∀ k1_t6 : Fin k1_t6_loop.trips, k1_off77 k1_t6 0#32 0#32 1 = 16 * k1_t6.val + 11 from by decide +kernel) k1_t6
  | ⟨2, _⟩ => rfl

theorem k1_off78_form (k1_t6 : Fin k1_t6_loop.trips) (v2099 c0_i32_808 : BitVec 32) :
    k1_off78 k1_t6 v2099 c0_i32_808 = ![0, 16 * k1_t6.val + 12, (v2099 + c0_i32_808).toNat] := by
  funext a
  match a with
  | ⟨0, _⟩ => rfl
  | ⟨1, _⟩ => exact (show ∀ k1_t6 : Fin k1_t6_loop.trips, k1_off78 k1_t6 0#32 0#32 1 = 16 * k1_t6.val + 12 from by decide +kernel) k1_t6
  | ⟨2, _⟩ => rfl

theorem k1_off79_form (k1_t6 : Fin k1_t6_loop.trips) (v2135 c0_i32_817 : BitVec 32) :
    k1_off79 k1_t6 v2135 c0_i32_817 = ![0, 16 * k1_t6.val + 13, (v2135 + c0_i32_817).toNat] := by
  funext a
  match a with
  | ⟨0, _⟩ => rfl
  | ⟨1, _⟩ => exact (show ∀ k1_t6 : Fin k1_t6_loop.trips, k1_off79 k1_t6 0#32 0#32 1 = 16 * k1_t6.val + 13 from by decide +kernel) k1_t6
  | ⟨2, _⟩ => rfl

theorem k1_off80_form (k1_t6 : Fin k1_t6_loop.trips) (v2171 c0_i32_826 : BitVec 32) :
    k1_off80 k1_t6 v2171 c0_i32_826 = ![0, 16 * k1_t6.val + 14, (v2171 + c0_i32_826).toNat] := by
  funext a
  match a with
  | ⟨0, _⟩ => rfl
  | ⟨1, _⟩ => exact (show ∀ k1_t6 : Fin k1_t6_loop.trips, k1_off80 k1_t6 0#32 0#32 1 = 16 * k1_t6.val + 14 from by decide +kernel) k1_t6
  | ⟨2, _⟩ => rfl

theorem k1_off81_form (k1_t6 : Fin k1_t6_loop.trips) (v2207 c0_i32_835 : BitVec 32) :
    k1_off81 k1_t6 v2207 c0_i32_835 = ![0, 16 * k1_t6.val + 15, (v2207 + c0_i32_835).toNat] := by
  funext a
  match a with
  | ⟨0, _⟩ => rfl
  | ⟨1, _⟩ => exact (show ∀ k1_t6 : Fin k1_t6_loop.trips, k1_off81 k1_t6 0#32 0#32 1 = 16 * k1_t6.val + 15 from by decide +kernel) k1_t6
  | ⟨2, _⟩ => rfl

theorem k1_off83_form (v1456 c0_i32_605 : BitVec 32) :
    k1_off83 v1456 c0_i32_605 = ![0, 48, (v1456 + c0_i32_605).toNat] := by
  funext a
  match a with
  | ⟨0, _⟩ => rfl
  | ⟨1, _⟩ => exact rfl
  | ⟨2, _⟩ => rfl

theorem k1_off84_form (v1490 c0_i32_616 : BitVec 32) :
    k1_off84 v1490 c0_i32_616 = ![0, 49, (v1490 + c0_i32_616).toNat] := by
  funext a
  match a with
  | ⟨0, _⟩ => rfl
  | ⟨1, _⟩ => exact rfl
  | ⟨2, _⟩ => rfl

theorem k1_off93_form (k1_t7 : Fin k1_t7_loop.trips) (v1667 c0_i32_693 : BitVec 32) :
    k1_off93 k1_t7 v1667 c0_i32_693 = ![1, 16 * k1_t7.val + 0, (v1667 + c0_i32_693).toNat] := by
  funext a
  match a with
  | ⟨0, _⟩ => rfl
  | ⟨1, _⟩ => exact (show ∀ k1_t7 : Fin k1_t7_loop.trips, k1_off93 k1_t7 0#32 0#32 1 = 16 * k1_t7.val + 0 from by decide +kernel) k1_t7
  | ⟨2, _⟩ => rfl

theorem k1_off94_form (k1_t7 : Fin k1_t7_loop.trips) (v1703 c0_i32_703 : BitVec 32) :
    k1_off94 k1_t7 v1703 c0_i32_703 = ![1, 16 * k1_t7.val + 1, (v1703 + c0_i32_703).toNat] := by
  funext a
  match a with
  | ⟨0, _⟩ => rfl
  | ⟨1, _⟩ => exact (show ∀ k1_t7 : Fin k1_t7_loop.trips, k1_off94 k1_t7 0#32 0#32 1 = 16 * k1_t7.val + 1 from by decide +kernel) k1_t7
  | ⟨2, _⟩ => rfl

theorem k1_off95_form (k1_t7 : Fin k1_t7_loop.trips) (v1739 c0_i32_713 : BitVec 32) :
    k1_off95 k1_t7 v1739 c0_i32_713 = ![1, 16 * k1_t7.val + 2, (v1739 + c0_i32_713).toNat] := by
  funext a
  match a with
  | ⟨0, _⟩ => rfl
  | ⟨1, _⟩ => exact (show ∀ k1_t7 : Fin k1_t7_loop.trips, k1_off95 k1_t7 0#32 0#32 1 = 16 * k1_t7.val + 2 from by decide +kernel) k1_t7
  | ⟨2, _⟩ => rfl

theorem k1_off96_form (k1_t7 : Fin k1_t7_loop.trips) (v1775 c0_i32_723 : BitVec 32) :
    k1_off96 k1_t7 v1775 c0_i32_723 = ![1, 16 * k1_t7.val + 3, (v1775 + c0_i32_723).toNat] := by
  funext a
  match a with
  | ⟨0, _⟩ => rfl
  | ⟨1, _⟩ => exact (show ∀ k1_t7 : Fin k1_t7_loop.trips, k1_off96 k1_t7 0#32 0#32 1 = 16 * k1_t7.val + 3 from by decide +kernel) k1_t7
  | ⟨2, _⟩ => rfl

theorem k1_off97_form (k1_t7 : Fin k1_t7_loop.trips) (v1811 c0_i32_733 : BitVec 32) :
    k1_off97 k1_t7 v1811 c0_i32_733 = ![1, 16 * k1_t7.val + 4, (v1811 + c0_i32_733).toNat] := by
  funext a
  match a with
  | ⟨0, _⟩ => rfl
  | ⟨1, _⟩ => exact (show ∀ k1_t7 : Fin k1_t7_loop.trips, k1_off97 k1_t7 0#32 0#32 1 = 16 * k1_t7.val + 4 from by decide +kernel) k1_t7
  | ⟨2, _⟩ => rfl

theorem k1_off98_form (k1_t7 : Fin k1_t7_loop.trips) (v1847 c0_i32_742 : BitVec 32) :
    k1_off98 k1_t7 v1847 c0_i32_742 = ![1, 16 * k1_t7.val + 5, (v1847 + c0_i32_742).toNat] := by
  funext a
  match a with
  | ⟨0, _⟩ => rfl
  | ⟨1, _⟩ => exact (show ∀ k1_t7 : Fin k1_t7_loop.trips, k1_off98 k1_t7 0#32 0#32 1 = 16 * k1_t7.val + 5 from by decide +kernel) k1_t7
  | ⟨2, _⟩ => rfl

theorem k1_off99_form (k1_t7 : Fin k1_t7_loop.trips) (v1883 c0_i32_752 : BitVec 32) :
    k1_off99 k1_t7 v1883 c0_i32_752 = ![1, 16 * k1_t7.val + 6, (v1883 + c0_i32_752).toNat] := by
  funext a
  match a with
  | ⟨0, _⟩ => rfl
  | ⟨1, _⟩ => exact (show ∀ k1_t7 : Fin k1_t7_loop.trips, k1_off99 k1_t7 0#32 0#32 1 = 16 * k1_t7.val + 6 from by decide +kernel) k1_t7
  | ⟨2, _⟩ => rfl

theorem k1_off100_form (k1_t7 : Fin k1_t7_loop.trips) (v1919 c0_i32_762 : BitVec 32) :
    k1_off100 k1_t7 v1919 c0_i32_762 = ![1, 16 * k1_t7.val + 7, (v1919 + c0_i32_762).toNat] := by
  funext a
  match a with
  | ⟨0, _⟩ => rfl
  | ⟨1, _⟩ => exact (show ∀ k1_t7 : Fin k1_t7_loop.trips, k1_off100 k1_t7 0#32 0#32 1 = 16 * k1_t7.val + 7 from by decide +kernel) k1_t7
  | ⟨2, _⟩ => rfl

theorem k1_off101_form (k1_t7 : Fin k1_t7_loop.trips) (v1955 c0_i32_772 : BitVec 32) :
    k1_off101 k1_t7 v1955 c0_i32_772 = ![1, 16 * k1_t7.val + 8, (v1955 + c0_i32_772).toNat] := by
  funext a
  match a with
  | ⟨0, _⟩ => rfl
  | ⟨1, _⟩ => exact (show ∀ k1_t7 : Fin k1_t7_loop.trips, k1_off101 k1_t7 0#32 0#32 1 = 16 * k1_t7.val + 8 from by decide +kernel) k1_t7
  | ⟨2, _⟩ => rfl

theorem k1_off102_form (k1_t7 : Fin k1_t7_loop.trips) (v1991 c0_i32_781 : BitVec 32) :
    k1_off102 k1_t7 v1991 c0_i32_781 = ![1, 16 * k1_t7.val + 9, (v1991 + c0_i32_781).toNat] := by
  funext a
  match a with
  | ⟨0, _⟩ => rfl
  | ⟨1, _⟩ => exact (show ∀ k1_t7 : Fin k1_t7_loop.trips, k1_off102 k1_t7 0#32 0#32 1 = 16 * k1_t7.val + 9 from by decide +kernel) k1_t7
  | ⟨2, _⟩ => rfl

theorem k1_off103_form (k1_t7 : Fin k1_t7_loop.trips) (v2027 c0_i32_790 : BitVec 32) :
    k1_off103 k1_t7 v2027 c0_i32_790 = ![1, 16 * k1_t7.val + 10, (v2027 + c0_i32_790).toNat] := by
  funext a
  match a with
  | ⟨0, _⟩ => rfl
  | ⟨1, _⟩ => exact (show ∀ k1_t7 : Fin k1_t7_loop.trips, k1_off103 k1_t7 0#32 0#32 1 = 16 * k1_t7.val + 10 from by decide +kernel) k1_t7
  | ⟨2, _⟩ => rfl

theorem k1_off104_form (k1_t7 : Fin k1_t7_loop.trips) (v2063 c0_i32_799 : BitVec 32) :
    k1_off104 k1_t7 v2063 c0_i32_799 = ![1, 16 * k1_t7.val + 11, (v2063 + c0_i32_799).toNat] := by
  funext a
  match a with
  | ⟨0, _⟩ => rfl
  | ⟨1, _⟩ => exact (show ∀ k1_t7 : Fin k1_t7_loop.trips, k1_off104 k1_t7 0#32 0#32 1 = 16 * k1_t7.val + 11 from by decide +kernel) k1_t7
  | ⟨2, _⟩ => rfl

theorem k1_off105_form (k1_t7 : Fin k1_t7_loop.trips) (v2099 c0_i32_808 : BitVec 32) :
    k1_off105 k1_t7 v2099 c0_i32_808 = ![1, 16 * k1_t7.val + 12, (v2099 + c0_i32_808).toNat] := by
  funext a
  match a with
  | ⟨0, _⟩ => rfl
  | ⟨1, _⟩ => exact (show ∀ k1_t7 : Fin k1_t7_loop.trips, k1_off105 k1_t7 0#32 0#32 1 = 16 * k1_t7.val + 12 from by decide +kernel) k1_t7
  | ⟨2, _⟩ => rfl

theorem k1_off106_form (k1_t7 : Fin k1_t7_loop.trips) (v2135 c0_i32_817 : BitVec 32) :
    k1_off106 k1_t7 v2135 c0_i32_817 = ![1, 16 * k1_t7.val + 13, (v2135 + c0_i32_817).toNat] := by
  funext a
  match a with
  | ⟨0, _⟩ => rfl
  | ⟨1, _⟩ => exact (show ∀ k1_t7 : Fin k1_t7_loop.trips, k1_off106 k1_t7 0#32 0#32 1 = 16 * k1_t7.val + 13 from by decide +kernel) k1_t7
  | ⟨2, _⟩ => rfl

theorem k1_off107_form (k1_t7 : Fin k1_t7_loop.trips) (v2171 c0_i32_826 : BitVec 32) :
    k1_off107 k1_t7 v2171 c0_i32_826 = ![1, 16 * k1_t7.val + 14, (v2171 + c0_i32_826).toNat] := by
  funext a
  match a with
  | ⟨0, _⟩ => rfl
  | ⟨1, _⟩ => exact (show ∀ k1_t7 : Fin k1_t7_loop.trips, k1_off107 k1_t7 0#32 0#32 1 = 16 * k1_t7.val + 14 from by decide +kernel) k1_t7
  | ⟨2, _⟩ => rfl

theorem k1_off108_form (k1_t7 : Fin k1_t7_loop.trips) (v2207 c0_i32_835 : BitVec 32) :
    k1_off108 k1_t7 v2207 c0_i32_835 = ![1, 16 * k1_t7.val + 15, (v2207 + c0_i32_835).toNat] := by
  funext a
  match a with
  | ⟨0, _⟩ => rfl
  | ⟨1, _⟩ => exact (show ∀ k1_t7 : Fin k1_t7_loop.trips, k1_off108 k1_t7 0#32 0#32 1 = 16 * k1_t7.val + 15 from by decide +kernel) k1_t7
  | ⟨2, _⟩ => rfl

theorem k1_off110_form (v1572 c0_i32_658 : BitVec 32) :
    k1_off110 v1572 c0_i32_658 = ![1, 48, (v1572 + c0_i32_658).toNat] := by
  funext a
  match a with
  | ⟨0, _⟩ => rfl
  | ⟨1, _⟩ => exact rfl
  | ⟨2, _⟩ => rfl

theorem k1_off111_form (v1606 c0_i32_670 : BitVec 32) :
    k1_off111 v1606 c0_i32_670 = ![1, 49, (v1606 + c0_i32_670).toNat] := by
  funext a
  match a with
  | ⟨0, _⟩ => rfl
  | ⟨1, _⟩ => exact rfl
  | ⟨2, _⟩ => rfl

end Offs

/-! ## The facts the loops carry -/

variable (fl : IVec Spec.SFlat 32) (tab : FVec F Spec.STab .f32)

/-- Word `n` of block `b` of worker `w`: word `8192 w + 1024 b + n` of the flat index array. -/
def blkWord (w b n : Nat) : BitVec 32 := Spec.flatAt fl (8192 * w + 1024 * b + n)

/-- Half `h` of the row-number scratch holds the table rows of block `b`'s 1024 words; -/
def TixV (w b h : Nat) (g1 : Buf (Elt F) ((sTix : Memref sig .scVector .vmem S2048 .i32).view.loc (thr d L))) : Prop :=
  ∀ (n : Nat) (hn : n < 1024) (hh : h < 2), g1 (ix1 (⟨1024 * h + n, by omega⟩ : Fin 2048)) = Spec.trow (blkWord fl w b n)

/-- half `h` of the column-offset scratch their column offsets. -/
def RvV (w b h : Nat) (g2 : Buf (Elt F) ((sRv : Memref sig .scVector .vmem S2048 .i32).view.loc (thr d L))) : Prop :=
  ∀ (n : Nat) (hn : n < 1024) (hh : h < 2), g2 (ix1 (⟨1024 * h + n, by omega⟩ : Fin 2048)) = Spec.tcol (blkWord fl w b n)

/-- Slot `sl` of the rows scratch holds the fifty table rows of bag `g` of block `b`: row `j` is the table's row for
    the bag's `j`-th word. -/
def RowsV (w b g : Nat) (sl : Fin 2) (r : Buf (Elt F) ((sRows : Memref sig .scVector .vmem S2x50x128 .f32).view.loc (thr d L))) : Prop :=
  ∀ (j : Fin 50) (c : Fin 128), r (ix3 sl j c) = Spec.tabAt tab (Spec.trow (blkWord fl w b (64 * g + j.val))).toNat c.val

/-- Half `ib` of the write-back scratch holds, in its rows below `n`, the sums of bags `0 … n - 1` of block `b`. -/
def WbV (w b : Nat) (ib : Fin 2) (n : Nat) (wb : Buf (Elt F) ((sWb : Memref sig .scVector .vmem S2x16x64 .f32).view.loc (thr d L))) : Prop :=
  ∀ (g : Fin 16) (c : Fin 64), g.val < n → wb (ix3 ib g c) = Spec.bagPartial fl tab (128 * w + 16 * b + g.val) c.val 50

omit [Named F] in
/-- The bag's words, as the sums' definition reads them. -/
theorem blkWord_eq (w b g j : Nat) : blkWord fl w b (64 * g + j) = Spec.flatAt fl (64 * (128 * w + 16 * b + g) + j) := by
  unfold blkWord; congr 1; omega

/-! ## The rows scratch after a landing -/

variable (hn : S50.numel = 50)

/-- A landing in slot 0 of the fifty rows a list names, the list's words being the table rows of bag `g`'s words, leaves
    slot 0 holding that bag's fifty table rows — whatever the scratch held. -/
theorem RowsV_landing0 (w b g : Nat)
    (g1 : Buf (Elt F) ((sTix : Memref sig .scVector .vmem S2048 .i32).view.loc (thr d L)))
    (o : Fin 1 → Nat) (ho : ∀ a, o a + S50.size a ≤ S2048.size a)
    (hwords : ∀ (j : Fin 50) (h : o 0 + j.val < 2048), g1 (ix1 ⟨o 0 + j.val, h⟩) = Spec.trow (blkWord fl w b (64 * g + j.val)))
    (hin : ∀ x, ((listM o ho).view.read (Elt F) g1 x).toNat < S507904x128.size (gathers_S507904x128_S50x128).axis)
    (r0 : Buf (Elt F) ((sRows : Memref sig .scVector .vmem S2x50x128 .f32).view.loc (thr d L))) :
    RowsV d L fl tab w b g 0 (View.write (Elt F) (h0M).view r0
      (SparseCore.gatherPayload gathers_S507904x128_S50x128 (tVM.view.read (Elt F) tab)
        (SparseCore.rows ((listM o ho).view.read (Elt F) g1) hn hin)) Finset.univ) := by
  intro j c
  have hb : o 0 + j.val < 2048 := by have h1 := ho 0; have h2 := j.isLt; change o 0 + 50 ≤ 2048 at h1; omega
  have hw := hwords j hb
  have hlt := hin (ix1 j)
  rw [list_read d L g1 o ho j hb, hw] at hlt
  rw [write_h0_same, gather_read, TileMath.tabAt_eq tab _ _ hlt c.isLt]
  congr 1
  funext a
  match a with
  | ⟨0, _⟩ => exact Fin.ext (by show ((listM o ho).view.read (Elt F) g1 (ix1 j)).toNat = _; rw [list_read d L g1 o ho j hb, hw])
  | ⟨1, _⟩ => rfl

/-- The same in slot 1. -/
theorem RowsV_landing1 (w b g : Nat)
    (g1 : Buf (Elt F) ((sTix : Memref sig .scVector .vmem S2048 .i32).view.loc (thr d L)))
    (o : Fin 1 → Nat) (ho : ∀ a, o a + S50.size a ≤ S2048.size a)
    (hwords : ∀ (j : Fin 50) (h : o 0 + j.val < 2048), g1 (ix1 ⟨o 0 + j.val, h⟩) = Spec.trow (blkWord fl w b (64 * g + j.val)))
    (hin : ∀ x, ((listM o ho).view.read (Elt F) g1 x).toNat < S507904x128.size (gathers_S507904x128_S50x128).axis)
    (r0 : Buf (Elt F) ((sRows : Memref sig .scVector .vmem S2x50x128 .f32).view.loc (thr d L))) :
    RowsV d L fl tab w b g 1 (View.write (Elt F) (h1M).view r0
      (SparseCore.gatherPayload gathers_S507904x128_S50x128 (tVM.view.read (Elt F) tab)
        (SparseCore.rows ((listM o ho).view.read (Elt F) g1) hn hin)) Finset.univ) := by
  intro j c
  have hb : o 0 + j.val < 2048 := by have h1 := ho 0; have h2 := j.isLt; change o 0 + 50 ≤ 2048 at h1; omega
  have hw := hwords j hb
  have hlt := hin (ix1 j)
  rw [list_read d L g1 o ho j hb, hw] at hlt
  rw [write_h1_same, gather_read, TileMath.tabAt_eq tab _ _ hlt c.isLt]
  congr 1
  funext a
  match a with
  | ⟨0, _⟩ => exact Fin.ext (by show ((listM o ho).view.read (Elt F) g1 (ix1 j)).toNat = _; rw [list_read d L g1 o ho j hb, hw])
  | ⟨1, _⟩ => rfl

/-- A landing in one slot leaves the other slot's rows. -/
theorem RowsV_keep1 (w b g : Nat) (r0 : Buf (Elt F) ((sRows : Memref sig .scVector .vmem S2x50x128 .f32).view.loc (thr d L)))
    (pay : S50x128.Idx → Elt F .f32) (h : RowsV d L fl tab w b g 1 r0) :
    RowsV d L fl tab w b g 1 (View.write (Elt F) (h0M).view r0 pay Finset.univ) := fun j c => by
  rw [write_h0_other]; exact h j c
theorem RowsV_keep0 (w b g : Nat) (r0 : Buf (Elt F) ((sRows : Memref sig .scVector .vmem S2x50x128 .f32).view.loc (thr d L)))
    (pay : S50x128.Idx → Elt F .f32) (h : RowsV d L fl tab w b g 0 r0) :
    RowsV d L fl tab w b g 0 (View.write (Elt F) (h1M).view r0 pay Finset.univ) := fun j c => by
  rw [write_h1_other]; exact h j c

/-- The words of the list at offset `1024 h + 64 g` of the row-number scratch, from what half `h` of the scratch holds. -/
theorem words_of_TixV (w b h g : Nat) (hh : h < 2) (hg : g < 16)
    (g1 : Buf (Elt F) ((sTix : Memref sig .scVector .vmem S2048 .i32).view.loc (thr d L)))
    (hT : TixV d L fl w b h g1) (o : Fin 1 → Nat) (ho0 : o 0 = 1024 * h + 64 * g) :
    ∀ (j : Fin 50) (hb : o 0 + j.val < 2048), g1 (ix1 ⟨o 0 + j.val, hb⟩) = Spec.trow (blkWord fl w b (64 * g + j.val)) := by
  intro j hb
  have hj := j.isLt
  have := hT (64 * g + j.val) (by omega) hh
  rw [← this]
  congr 2
  exact Fin.ext (by show o 0 + j.val = 1024 * h + (64 * g + j.val); omega)

/-- Bag 16 of a block is bag 0 of the next. -/
theorem blkWord_next (w b n : Nat) : blkWord fl w b (64 * 16 + n) = blkWord fl w (b + 1) (64 * 0 + n) := by
  unfold blkWord; congr 1; omega

end Tile

end Cert.Proof.Bag

end
-- ==== Proof.TileFacts.lean ====
/-
  What one vector subcore's scratches hold at the top of a trip of a block's pair loop, as pure facts of their contents.

  Before trip `k` of EVEN block `b` (lists in half 0 of the row-number scratch, sums into slot 0 of the write-back scratch):
  half 0 of the row-number and column-offset scratches hold block `b`'s row numbers and column offsets, half 1 block
  `b + 1`'s (converted before the loop); the gather in flight lands bag `2 k`'s rows in slot 0 (at `k = 8`: the next block's
  first bag); rows `0 ..< 2 k` of slot 0 of the write-back scratch hold their bags' sums. ODD blocks mirror it, with no
  gather left in flight after the last block.
-/
import proofs.«203835_g19404662243951_cont_8to1_399_35_alg».proof.Proof.TilePre
import proofs.«203835_g19404662243951_cont_8to1_399_35_alg».proof.Proof.Pay
import proofs.«203835_g19404662243951_cont_8to1_399_35_alg».proof.Proof.TileVal
import Idealize.ShloMosaic.Lib.Tactic

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

section Tile

variable (d : Dev nD) (L : grid1.Coords) (fl : IVec Spec.SFlat 32) (tab : FVec F Spec.STab .f32)

/-- Before trip `k` of even block `b`'s pair loop. -/
def EvenV (b k : Nat) (r : Buf (Elt F) ((sRows : Memref sig .scVector .vmem S2x50x128 .f32).view.loc (thr d L)))
    (g1 : Buf (Elt F) ((sTix : Memref sig .scVector .vmem S2048 .i32).view.loc (thr d L)))
    (g2 : Buf (Elt F) ((sRv : Memref sig .scVector .vmem S2048 .i32).view.loc (thr d L)))
    (wb : Buf (Elt F) ((sWb : Memref sig .scVector .vmem S2x16x64 .f32).view.loc (thr d L))) : Prop :=
  TixV d L fl (wL L).val b 0 g1 ∧ RvV d L fl (wL L).val b 0 g2 ∧ TixV d L fl (wL L).val (b + 1) 1 g1 ∧ RvV d L fl (wL L).val (b + 1) 1 g2
    ∧ RowsV d L fl tab (wL L).val b (2 * k) 0 r ∧ WbV d L fl tab (wL L).val b 0 (2 * k) wb

/-- Before trip `k` of odd block `b`'s pair loop. -/
def OddV (b k : Nat) (r : Buf (Elt F) ((sRows : Memref sig .scVector .vmem S2x50x128 .f32).view.loc (thr d L)))
    (g1 : Buf (Elt F) ((sTix : Memref sig .scVector .vmem S2048 .i32).view.loc (thr d L)))
    (g2 : Buf (Elt F) ((sRv : Memref sig .scVector .vmem S2048 .i32).view.loc (thr d L)))
    (wb : Buf (Elt F) ((sWb : Memref sig .scVector .vmem S2x16x64 .f32).view.loc (thr d L))) : Prop :=
  TixV d L fl (wL L).val b 1 g1 ∧ RvV d L fl (wL L).val b 1 g2
    ∧ (b < 7 → TixV d L fl (wL L).val (b + 1) 0 g1 ∧ RvV d L fl (wL L).val (b + 1) 0 g2)
    ∧ (k < 8 ∨ b < 7 → RowsV d L fl tab (wL L).val b (2 * k) 0 r) ∧ WbV d L fl tab (wL L).val b 1 (2 * k) wb

end Tile

end Cert.Proof.Bag

end
-- ==== Proof.TileInv.lean ====
/-
  What an even block's pair loop carries from trip to trip on a vector subcore.

  Bag `2 k`'s fifty table rows are gathered into slot 0 of the rows scratch while bag `2 k - 1`'s are summed out of slot 1, and
  the other way round: at the top of trip `k` the gather of bag `2 k` is in flight on the first gather semaphore, holding slot
  0, the bag's list and the table's elements; everything else of the scratches is in hand (the write-back scratch but for its
  slot 1, whose copy out may still be in flight), and the second gather semaphore is at zero.
-/
import proofs.«203835_g19404662243951_cont_8to1_399_35_alg».proof.Proof.TilePre
import proofs.«203835_g19404662243951_cont_8to1_399_35_alg».proof.Proof.Pay
import proofs.«203835_g19404662243951_cont_8to1_399_35_alg».proof.Proof.TileFacts
import Idealize.ShloMosaic.Lib.Tactic

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid1.Coords)

/-- Before trip `k` of an even block's pair loop: the gather of bag `2 k`'s rows into slot 0 is in flight on the first
    gather semaphore, holding slot 0, the bag's list and the table's elements; the rest of the table, of the rows scratch and
    of the list scratch are in hand, with the column-offset scratch whole and the write-back scratch but for its slot 1
    (whose copy out to the sums may still be in flight); the second gather semaphore is at zero. -/
def inv0 (fl : IVec Spec.SFlat 32) (qt : PosShare TreeShare) (tab : FVec F Spec.STab .f32) (O : CellTallies nD τ sig (HIx 1))
    (W0 : Waits sig (HIx 1)) (b : Nat) (k : Nat) (_ : PUnit) : sProp 𝕄 :=
  iprop(Transfers.MayWaits (thr d L) (none : HIx 1) O
    ∗ ∃ (r : Buf (Elt F) ((sRows : Memref sig .scVector .vmem S2x50x128 .f32).view.loc (thr d L)))
        (g1 : Buf (Elt F) ((sTix : Memref sig .scVector .vmem S2048 .i32).view.loc (thr d L)))
        (g2 : Buf (Elt F) ((sRv : Memref sig .scVector .vmem S2048 .i32).view.loc (thr d L)))
        (wb : Buf (Elt F) ((sWb : Memref sig .scVector .vmem S2x16x64 .f32).view.loc (thr d L)))
        (o : Fin 1 → Nat) (ho : ∀ a, o a + S50.size a ≤ S2048.size a),
      ⌜TixB d L g1 ∧ RvB d L g2 ∧ o = lo k ∧ EvenV d L fl tab b k r g1 g2 wb⌝
      ∗ Transfers.Flight countersEmb (thr d L) (SemLoc.dma cc1_scratch5.sem) (default : HIx 1) 204800
          iprop((((sRows : Memref sig .scVector .vmem S2x50x128 .f32).view.loc (thr d L) ↦[(h0M).view.set]{fullShare} r)
              ∗ ((sTix : Memref sig .scVector .vmem S2048 .i32).view.loc (thr d L) ↦[(listM o ho).view.set]{fullShare} g1))
            ∗ ((tV : Memref sig .scVector .hbm S507904x128 .f32).view.loc (thr d L) ↦[(tVM).view.set]{qt} tab))
      ∗ ((sTix : Memref sig .scVector .vmem S2048 .i32).view.loc (thr d L) ↦[Finset.univ \ (listM o ho).view.set]{fullShare} g1)
      ∗ ((tV : Memref sig .scVector .hbm S507904x128 .f32).view.loc (thr d L) ↦[Finset.univ \ (tVM).view.set]{qt} tab)
      ∗ ((sRows : Memref sig .scVector .vmem S2x50x128 .f32).view.loc (thr d L) ↦[Finset.univ \ (h0M).view.set]{fullShare} r)
      ∗ ((sRv : Memref sig .scVector .vmem S2048 .i32).view.loc (thr d L) ↦{fullShare} g2)
      ∗ ((sWb : Memref sig .scVector .vmem S2x16x64 .f32).view.loc (thr d L) ↦[Finset.univ \ (slot1M).view.set]{fullShare} wb)
      ∗ semVal (thr d L, SemLoc.dma cc1_scratch6.sem) 0
      ∗ ∃ W', ⌜∀ p ∈ W', p ∈ W0 ∨ p.2 = none⌝ ∗ owes (thr d L) O W')

end Tile

end Cert.Proof.Bag

end
-- ==== Proof.TileInv1.lean ====
/-
  What the pair loop of an ODD block of one vector subcore's task carries from trip to trip.

  Odd block `b` reads its lists from the second half of the row-number scratch: at the top of trip `k` the gather of bag `2 k`
  is in flight on the first gather semaphore with the list at word `1024 + 128 k`; its sums go to slot 1 of the write-back
  scratch, slot 0's copy out being possibly still in flight. The last trip starts the gather of the NEXT block's first bag
  (the list at word 0) — unless the block is the task's last (`b = 7`), when after the last trip nothing is in flight: both
  gather semaphores are at zero and the scratches and the table's share are whole.
-/
import proofs.«203835_g19404662243951_cont_8to1_399_35_alg».proof.Proof.TilePre
import proofs.«203835_g19404662243951_cont_8to1_399_35_alg».proof.Proof.Pay
import proofs.«203835_g19404662243951_cont_8to1_399_35_alg».proof.Proof.TileFacts
import Idealize.ShloMosaic.Lib.Tactic

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid1.Coords)

/-- The offset of list `2 k` of an odd block, as one word of offsets: in the second half of the row-number scratch for the
    block's eight trips, and the first word of the scratch (the next block's first list) after the last. -/
def lo1 (k : Nat) : Fin 1 → Nat := if k < 8 then ![1024 + 128 * k] else ![0]
theorem lo1_inb (k : Nat) : ∀ a, lo1 k a + S50.size a ≤ S2048.size a := by
  intro a; obtain rfl : a = 0 := Subsingleton.elim _ _
  unfold lo1
  split
  · show 1024 + 128 * k + 50 ≤ 2048
    omega
  · show 0 + 50 ≤ 2048
    omega

/-- Before trip `k` of odd block `b`'s pair loop with a gather in flight: as for an even block, the list at `lo1 k`, the
    write-back scratch held but for its slot 0 (whose copy out to the sums may still be in flight). -/
def invF (fl : IVec Spec.SFlat 32) (qt : PosShare TreeShare) (tab : FVec F Spec.STab .f32) (O : CellTallies nD τ sig (HIx 1))
    (W0 : Waits sig (HIx 1)) (b : Nat) (k : Nat) (_ : PUnit) : sProp 𝕄 :=
  iprop(Transfers.MayWaits (thr d L) (none : HIx 1) O
    ∗ ∃ (r : Buf (Elt F) ((sRows : Memref sig .scVector .vmem S2x50x128 .f32).view.loc (thr d L)))
        (g1 : Buf (Elt F) ((sTix : Memref sig .scVector .vmem S2048 .i32).view.loc (thr d L)))
        (g2 : Buf (Elt F) ((sRv : Memref sig .scVector .vmem S2048 .i32).view.loc (thr d L)))
        (wb : Buf (Elt F) ((sWb : Memref sig .scVector .vmem S2x16x64 .f32).view.loc (thr d L)))
        (o : Fin 1 → Nat) (ho : ∀ a, o a + S50.size a ≤ S2048.size a),
      ⌜TixB d L g1 ∧ RvB d L g2 ∧ o = lo1 k ∧ OddV d L fl tab b k r g1 g2 wb⌝
      ∗ Transfers.Flight countersEmb (thr d L) (SemLoc.dma cc1_scratch5.sem) (default : HIx 1) 204800
          iprop((((sRows : Memref sig .scVector .vmem S2x50x128 .f32).view.loc (thr d L) ↦[(h0M).view.set]{fullShare} r)
              ∗ ((sTix : Memref sig .scVector .vmem S2048 .i32).view.loc (thr d L) ↦[(listM o ho).view.set]{fullShare} g1))
            ∗ ((tV : Memref sig .scVector .hbm S507904x128 .f32).view.loc (thr d L) ↦[(tVM).view.set]{qt} tab))
      ∗ ((sTix : Memref sig .scVector .vmem S2048 .i32).view.loc (thr d L) ↦[Finset.univ \ (listM o ho).view.set]{fullShare} g1)
      ∗ ((tV : Memref sig .scVector .hbm S507904x128 .f32).view.loc (thr d L) ↦[Finset.univ \ (tVM).view.set]{qt} tab)
      ∗ ((sRows : Memref sig .scVector .vmem S2x50x128 .f32).view.loc (thr d L) ↦[Finset.univ \ (h0M).view.set]{fullShare} r)
      ∗ ((sRv : Memref sig .scVector .vmem S2048 .i32).view.loc (thr d L) ↦{fullShare} g2)
      ∗ ((sWb : Memref sig .scVector .vmem S2x16x64 .f32).view.loc (thr d L) ↦[Finset.univ \ (slot0M).view.set]{fullShare} wb)
      ∗ semVal (thr d L, SemLoc.dma cc1_scratch6.sem) 0
      ∗ ∃ W', ⌜∀ p ∈ W', p ∈ W0 ∨ p.2 = none⌝ ∗ owes (thr d L) O W')

/-- After the last trip of the task's last block: nothing in flight, both gather semaphores at zero, the scratches (the
    write-back scratch but for its slot 0) and the table's share whole. -/
def invL (fl : IVec Spec.SFlat 32) (qt : PosShare TreeShare) (tab : FVec F Spec.STab .f32) (O : CellTallies nD τ sig (HIx 1))
    (W0 : Waits sig (HIx 1)) (b : Nat) (_ : PUnit) : sProp 𝕄 :=
  iprop(Transfers.MayWaits (thr d L) (none : HIx 1) O
    ∗ ∃ (r : Buf (Elt F) ((sRows : Memref sig .scVector .vmem S2x50x128 .f32).view.loc (thr d L)))
        (g1 : Buf (Elt F) ((sTix : Memref sig .scVector .vmem S2048 .i32).view.loc (thr d L)))
        (g2 : Buf (Elt F) ((sRv : Memref sig .scVector .vmem S2048 .i32).view.loc (thr d L)))
        (wb : Buf (Elt F) ((sWb : Memref sig .scVector .vmem S2x16x64 .f32).view.loc (thr d L))),
      ⌜TixB d L g1 ∧ RvB d L g2 ∧ OddV d L fl tab b 8 r g1 g2 wb⌝
      ∗ semVal (thr d L, SemLoc.dma cc1_scratch5.sem) 0
      ∗ ((sTix : Memref sig .scVector .vmem S2048 .i32).view.loc (thr d L) ↦{fullShare} g1)
      ∗ ((tV : Memref sig .scVector .hbm S507904x128 .f32).view.loc (thr d L) ↦{qt} tab)
      ∗ ((sRows : Memref sig .scVector .vmem S2x50x128 .f32).view.loc (thr d L) ↦{fullShare} r)
      ∗ ((sRv : Memref sig .scVector .vmem S2048 .i32).view.loc (thr d L) ↦{fullShare} g2)
      ∗ ((sWb : Memref sig .scVector .vmem S2x16x64 .f32).view.loc (thr d L) ↦[Finset.univ \ (slot0M).view.set]{fullShare} wb)
      ∗ semVal (thr d L, SemLoc.dma cc1_scratch6.sem) 0
      ∗ ∃ W', ⌜∀ p ∈ W', p ∈ W0 ∨ p.2 = none⌝ ∗ owes (thr d L) O W')

/-- Before trip `k` of odd block `b`: a gather in flight, but for after the last trip of the last block (`b = 7`). -/
def inv1 (fl : IVec Spec.SFlat 32) (qt : PosShare TreeShare) (tab : FVec F Spec.STab .f32) (O : CellTallies nD τ sig (HIx 1))
    (W0 : Waits sig (HIx 1)) (b : Nat) (k : Nat) (u : PUnit) : sProp 𝕄 :=
  if k < 8 ∨ b < 7 then invF d L fl qt tab O W0 b k u else invL d L fl qt tab O W0 b u

theorem inv1_flight (fl : IVec Spec.SFlat 32) (qt : PosShare TreeShare) (tab : FVec F Spec.STab .f32) (O : CellTallies nD τ sig (HIx 1))
    (W0 : Waits sig (HIx 1)) (b k : Nat) (h : k < 8 ∨ b < 7) : inv1 d L fl qt tab O W0 b k = invF d L fl qt tab O W0 b k :=
  funext fun _ => if_pos h
theorem inv1_last (fl : IVec Spec.SFlat 32) (qt : PosShare TreeShare) (tab : FVec F Spec.STab .f32) (O : CellTallies nD τ sig (HIx 1))
    (W0 : Waits sig (HIx 1)) (b k : Nat) (h : ¬ (k < 8 ∨ b < 7)) : inv1 d L fl qt tab O W0 b k = invL d L fl qt tab O W0 b :=
  funext fun _ => if_neg h

theorem trips5 : k1_t5_loop.trips = 8 := by decide
theorem cond9_lt : ∀ k : Fin k1_t5_loop.trips, k.val < 7 → k1_cond9 k = 1#1 := by decide
theorem cond9_ge : ∀ k : Fin k1_t5_loop.trips, ¬ k.val < 7 → ¬ k1_cond9 k = 1#1 := by decide
theorem cond10_lt : ∀ (t : Fin k1_t1_loop.trips) (k : Fin k1_t5_loop.trips), k.val < 7 → ¬ k1_cond10 t k = 1#1 := by decide
theorem cond10_ge_lt : ∀ (t : Fin k1_t1_loop.trips) (k : Fin k1_t5_loop.trips), ¬ k.val < 7 → t.val < 3 → k1_cond10 t k = 1#1 := by decide
theorem cond10_ge_ge : ∀ (t : Fin k1_t1_loop.trips) (k : Fin k1_t5_loop.trips), ¬ k.val < 7 → ¬ t.val < 3 → ¬ k1_cond10 t k = 1#1 := by decide

end Tile

end Cert.Proof.Bag

end
-- ==== Proof.TileSlots.lean ====
/-
  The write-back scratch's two slots: slot `s` is the elements `(s, g, c)`. The two are disjoint, a slot and the rest of
  the scratch but the other slot join to the scratch but the other slot, and what is known of a slot's sums is not touched by
  the other slot's contents.
-/
import proofs.«203835_g19404662243951_cont_8to1_399_35_alg».proof.Proof.TileVal

noncomputable section

namespace Cert.Proof.Bag

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode

variable {F : FTy → Type} [FloatOps F] [Named F]

local notation "𝕄" => MT nD τ sig (HIx 1) (Elt F) ℕ UU ℕ

section Slots

variable (d : Dev nD) (L : grid1.Coords)

omit [FloatOps F] [Named F] in
theorem set_slot0M : ((slot0M).view.set : Finset (Idx ((sWb : Memref sig .scVector .vmem S2x16x64 .f32).view.loc (thr d L))))
    = (Rect.unit (s := S2x16x64) ![0, 0, 0] S1x16x64.size inb_S2x16x64_S1x16x64_0_0_0).set := by
  simp only [Memref.view_squeeze, View.set_reshape, Memref.view_slice, Memref.view_whole, View.set_slice_whole]
omit [FloatOps F] [Named F] in
theorem set_slot1M : ((slot1M).view.set : Finset (Idx ((sWb : Memref sig .scVector .vmem S2x16x64 .f32).view.loc (thr d L))))
    = (Rect.unit (s := S2x16x64) ![1, 0, 0] S1x16x64.size inb_S2x16x64_S1x16x64_1_0_0).set := by
  simp only [Memref.view_squeeze, View.set_reshape, Memref.view_slice, Memref.view_whole, View.set_slice_whole]

omit [FloatOps F] [Named F] in
/-- Slot 0 and slot 1 share no element. -/
theorem slots_disjoint :
    Disjoint ((slot0M).view.set : Finset (Idx ((sWb : Memref sig .scVector .vmem S2x16x64 .f32).view.loc (thr d L)))) (slot1M).view.set := by
  rw [set_slot0M, set_slot1M]
  exact Rect.unit_disjoint 0 (Or.inl (by decide))

omit [FloatOps F] [Named F] in
theorem mem_slot0M (i : Idx ((sWb : Memref sig .scVector .vmem S2x16x64 .f32).view.loc (thr d L))) :
    i ∈ ((slot0M).view.set : Finset (Idx ((sWb : Memref sig .scVector .vmem S2x16x64 .f32).view.loc (thr d L)))) ↔ (i 0).val = 0 := by
  rw [set_slot0M, Rect.mem_set_unit]
  constructor
  · intro h; have := h 0; simp at this; omega
  · intro h a
    have h0 : (i 0).val < 2 := (i 0).isLt
    have h1 : (i 1).val < 16 := (i 1).isLt
    have h2 : (i 2).val < 64 := (i 2).isLt
    match a with
    | ⟨0, _⟩ => exact ⟨Nat.zero_le _, by show (i 0).val < 0 + 1; omega⟩
    | ⟨1, _⟩ => exact ⟨Nat.zero_le _, by show (i 1).val < 0 + 16; omega⟩
    | ⟨2, _⟩ => exact ⟨Nat.zero_le _, by show (i 2).val < 0 + 64; omega⟩
omit [FloatOps F] [Named F] in
theorem mem_slot1M (i : Idx ((sWb : Memref sig .scVector .vmem S2x16x64 .f32).view.loc (thr d L))) :
    i ∈ ((slot1M).view.set : Finset (Idx ((sWb : Memref sig .scVector .vmem S2x16x64 .f32).view.loc (thr d L)))) ↔ (i 0).val = 1 := by
  rw [set_slot1M, Rect.mem_set_unit]
  constructor
  · intro h; have := h 0; simp at this; omega
  · intro h a
    have h0 : (i 0).val < 2 := (i 0).isLt
    have h1 : (i 1).val < 16 := (i 1).isLt
    have h2 : (i 2).val < 64 := (i 2).isLt
    match a with
    | ⟨0, _⟩ => exact ⟨by show 1 ≤ (i 0).val; omega, by show (i 0).val < 1 + 1; omega⟩
    | ⟨1, _⟩ => exact ⟨Nat.zero_le _, by show (i 1).val < 0 + 16; omega⟩
    | ⟨2, _⟩ => exact ⟨Nat.zero_le _, by show (i 2).val < 0 + 64; omega⟩

omit [FloatOps F] [Named F] in
/-- Slot 0 at `fa` and the scratch but both slots at `fr` are the scratch but slot 1, slot 0's elements at `fa`. -/
theorem wb_join_a (fa fr : Buf (Elt F) ((sWb : Memref sig .scVector .vmem S2x16x64 .f32).view.loc (thr d L))) :
    iprop(((sWb : Memref sig .scVector .vmem S2x16x64 .f32).view.loc (thr d L) ↦[(slot0M).view.set]{fullShare} fa)
        ∗ ((sWb : Memref sig .scVector .vmem S2x16x64 .f32).view.loc (thr d L) ↦[(Finset.univ \ (slot0M).view.set) \ (slot1M).view.set]{fullShare} fr))
      ⊢ ((sWb : Memref sig .scVector .vmem S2x16x64 .f32).view.loc (thr d L) ↦[Finset.univ \ (slot1M).view.set]{fullShare}
          ((slot0M).view.set.piecewise fa fr) : sProp 𝕄) := by
  rw [sdiff_right_comm]
  exact pointsTo_join_subset (fun i hi => Finset.mem_sdiff.mpr ⟨Finset.mem_univ _, Finset.disjoint_left.mp slots_disjoint hi⟩)

omit [FloatOps F] [Named F] in
/-- The mirror: slot 1 at `fa` and the scratch but both slots at `fr` are the scratch but slot 0. -/
theorem wb_join_b (fa fr : Buf (Elt F) ((sWb : Memref sig .scVector .vmem S2x16x64 .f32).view.loc (thr d L))) :
    iprop(((sWb : Memref sig .scVector .vmem S2x16x64 .f32).view.loc (thr d L) ↦[(slot1M).view.set]{fullShare} fa)
        ∗ ((sWb : Memref sig .scVector .vmem S2x16x64 .f32).view.loc (thr d L) ↦[(Finset.univ \ (slot1M).view.set) \ (slot0M).view.set]{fullShare} fr))
      ⊢ ((sWb : Memref sig .scVector .vmem S2x16x64 .f32).view.loc (thr d L) ↦[Finset.univ \ (slot0M).view.set]{fullShare}
          ((slot1M).view.set.piecewise fa fr) : sProp 𝕄) := by
  rw [sdiff_right_comm]
  exact pointsTo_join_subset (fun i hi => Finset.mem_sdiff.mpr ⟨Finset.mem_univ _, Finset.disjoint_right.mp slots_disjoint hi⟩)

variable (fl : IVec Spec.SFlat 32) (tab : FVec F Spec.STab .f32)

/-- What is known of slot 0's sums is kept when slot 0's elements are taken from `fa`; -/
theorem WbV_piecewise0_keep (w b n : Nat) (fa fr : Buf (Elt F) ((sWb : Memref sig .scVector .vmem S2x16x64 .f32).view.loc (thr d L)))
    (h : WbV d L fl tab w b 0 n fa) : WbV d L fl tab w b 0 n ((slot0M).view.set.piecewise fa fr) := by
  intro g c hg
  rw [Finset.piecewise_eq_of_mem _ _ _ ((mem_slot0M d L _).mpr rfl)]
  exact h g c hg
/-- what is known of slot 1's is kept when only slot 0's elements change. -/
theorem WbV_piecewise0_other (w b n : Nat) (fa fr : Buf (Elt F) ((sWb : Memref sig .scVector .vmem S2x16x64 .f32).view.loc (thr d L)))
    (h : WbV d L fl tab w b 1 n fr) : WbV d L fl tab w b 1 n ((slot0M).view.set.piecewise fa fr) := by
  intro g c hg
  rw [Finset.piecewise_eq_of_notMem _ _ _ (fun hm => absurd ((mem_slot0M d L _).mp hm) (by show ¬ ((1 : Fin 2).val = 0); decide))]
  exact h g c hg
/-- The mirrors for slot 1. -/
theorem WbV_piecewise1_keep (w b n : Nat) (fa fr : Buf (Elt F) ((sWb : Memref sig .scVector .vmem S2x16x64 .f32).view.loc (thr d L)))
    (h : WbV d L fl tab w b 1 n fa) : WbV d L fl tab w b 1 n ((slot1M).view.set.piecewise fa fr) := by
  intro g c hg
  rw [Finset.piecewise_eq_of_mem _ _ _ ((mem_slot1M d L _).mpr rfl)]
  exact h g c hg
theorem WbV_piecewise1_other (w b n : Nat) (fa fr : Buf (Elt F) ((sWb : Memref sig .scVector .vmem S2x16x64 .f32).view.loc (thr d L)))
    (h : WbV d L fl tab w b 0 n fr) : WbV d L fl tab w b 0 n ((slot1M).view.set.piecewise fa fr) := by
  intro g c hg
  rw [Finset.piecewise_eq_of_notMem _ _ _ (fun hm => absurd ((mem_slot1M d L _).mp hm) (by show ¬ ((0 : Fin 2).val = 1); decide))]
  exact h g c hg

end Slots

end Cert.Proof.Bag

end
-- ==== Proof.TileLand.lean ====
/-
  The write-backs' landing.  A trip of the outer loop copies the two halves of the write-back scratch into the
  trip's two blocks of sixteen rows of the sums.  Entry `(g, c)` of half `ib` is entry `(ib, g, c)` of the scratch;
  entry `(g, c)` of block `2 t + r` of worker `w` is entry `(128 w + 16 (2 t + r) + g, c)` of the sums' array.  So
  where the half holds the sums of the block's sixteen bags, the block after the landing holds, at each of its
  elements, the bag sums' own entry: the block is held at the bag sums.
-/
import proofs.«203835_g19404662243951_cont_8to1_399_35_alg».proof.Proof.TileOut
import proofs.«203835_g19404662243951_cont_8to1_399_35_alg».proof.Proof.TileAbbrev
import proofs.«203835_g19404662243951_cont_8to1_399_35_alg».proof.Proof.TileVal

noncomputable section

namespace Cert.Proof.Bag

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

section Tile

variable (d : Dev nD) (L : grid1.Coords)

/-! ## Where the slots and the blocks sit -/

omit [FloatOps F] [Named F] d L in
/-- Entry `(g, c)` of half 0 of the write-back scratch is entry `(0, g, c)` of the scratch; -/
theorem slot0M_emb (g : Fin 16) (c : Fin 64) : (slot0M).view.emb (ix2 g c) = ix3 (0 : Fin 2) g c := by
  show (Rect.unit (s := S2x16x64) ![0, 0, 0] S1x16x64.size inb_S2x16x64_S1x16x64_0_0_0).emb
    (Shape.reshapeEquiv squeezes_S1x16x64_S16x64.numel_eq (ix2 g c)) = _
  rw [reshapeEquiv_ix2_1ab]
  funext a; apply Fin.ext
  match a with
  | ⟨0, _⟩ => rfl
  | ⟨1, _⟩ => show 0 + 1 * g.val = g.val; omega
  | ⟨2, _⟩ => show 0 + 1 * c.val = c.val; omega

omit [FloatOps F] [Named F] d L in
/-- of half 1, entry `(1, g, c)`. -/
theorem slot1M_emb (g : Fin 16) (c : Fin 64) : (slot1M).view.emb (ix2 g c) = ix3 (1 : Fin 2) g c := by
  show (Rect.unit (s := S2x16x64) ![1, 0, 0] S1x16x64.size inb_S2x16x64_S1x16x64_1_0_0).emb
    (Shape.reshapeEquiv squeezes_S1x16x64_S16x64.numel_eq (ix2 g c)) = _
  rw [reshapeEquiv_ix2_1ab]
  funext a; apply Fin.ext
  match a with
  | ⟨0, _⟩ => rfl
  | ⟨1, _⟩ => show 0 + 1 * g.val = g.val; omega
  | ⟨2, _⟩ => show 0 + 1 * c.val = c.val; omega

omit [FloatOps F] [Named F] d L in
/-- A row of a worker's even block is a row of the sums. -/
theorem row0_lt (L : grid1.Coords) (t : Fin k1_t1_loop.trips) (g : Fin 16) : 128 * (wL L).val + 16 * (2 * t.val) + g.val < 4096 := by
  have := (wL L).isLt; have := two_mul_lt t; have := g.isLt; omega
omit [FloatOps F] [Named F] d L in
theorem row1_lt (L : grid1.Coords) (t : Fin k1_t1_loop.trips) (g : Fin 16) : 128 * (wL L).val + 16 * (2 * t.val + 1) + g.val < 4096 := by
  have := (wL L).isLt; have := two_mul_succ_lt t; have := g.isLt; omega

omit [FloatOps F] [Named F] d in
/-- Entry `(g, c)` of the even block of trip `t` is entry `(128 w + 16 (2 t) + g, c)` of the sums; -/
theorem oBlkM0_emb (t : Fin k1_t1_loop.trips) (g : Fin 16) (c : Fin 64) :
    (oBlkM0 L t).view.emb (ix2 g c) = ix2 (⟨128 * (wL L).val + 16 * (2 * t.val) + g.val, row0_lt L t g⟩ : Fin 4096) c := by
  funext a; apply Fin.ext
  match a with
  | ⟨0, _⟩ =>
    show (k1_off59 L t 0#32) 0 + 1 * g.val = 128 * (wL L).val + 16 * (2 * t.val) + g.val
    rw [show k1_off59 L t 0#32 = _ from k1_off59_eq L t 0, wL_val]
    simp only [Matrix.cons_val_zero]
    show 256 * (L 1).val + 128 * (L 0).val + 32 * t.val + 16 * 0 + 1 * g.val = _
    omega
  | ⟨1, _⟩ =>
    show (k1_off59 L t 0#32) 1 + 1 * c.val = c.val
    rw [show k1_off59 L t 0#32 = _ from k1_off59_eq L t 0]
    simp only [Matrix.cons_val_one, Matrix.cons_val_zero]
    omega

omit [FloatOps F] [Named F] d in
/-- of the odd block, entry `(128 w + 16 (2 t + 1) + g, c)`. -/
theorem oBlkM1_emb (t : Fin k1_t1_loop.trips) (g : Fin 16) (c : Fin 64) :
    (oBlkM1 L t).view.emb (ix2 g c) = ix2 (⟨128 * (wL L).val + 16 * (2 * t.val + 1) + g.val, row1_lt L t g⟩ : Fin 4096) c := by
  funext a; apply Fin.ext
  match a with
  | ⟨0, _⟩ =>
    show (k1_off59 L t 1#32) 0 + 1 * g.val = 128 * (wL L).val + 16 * (2 * t.val + 1) + g.val
    rw [show k1_off59 L t 1#32 = _ from k1_off59_eq L t 1, wL_val]
    simp only [Matrix.cons_val_zero]
    show 256 * (L 1).val + 128 * (L 0).val + 32 * t.val + 16 * 1 + 1 * g.val = _
    omega
  | ⟨1, _⟩ =>
    show (k1_off59 L t 1#32) 1 + 1 * c.val = c.val
    rw [show k1_off59 L t 1#32 = _ from k1_off59_eq L t 1]
    simp only [Matrix.cons_val_one, Matrix.cons_val_zero]
    omega

/-! ## The blocks after the landing -/

variable (fl : IVec Spec.SFlat 32) (tab : FVec F Spec.STab .f32)

omit [Named F] in
/-- After half 0 of the write-back scratch, holding the sums of the sixteen bags of block `2 t`, has landed in the
    even block of trip `t`, the block is held at the bag sums. -/
theorem out_vals0 (t : Fin k1_t1_loop.trips) (fb : Buf (Elt F) (oLoc d))
    (wbc : Buf (Elt F) ((sWb : Memref sig .scVector .vmem S2x16x64 .f32).view.loc (thr d L)))
    (pay : (Rect.whole S16x64).shape.Idx → Elt F .f32) (hpay : pay = (slot0M).view.read (Elt F) wbc)
    (hW : WbV d L fl tab (wL L).val (2 * t.val) 0 16 wbc) :
    ((oBlkM0 L t).view.loc (thr d L) ↦[(oBlkM0 L t).view.set]{fullShare}
        (oBlkM0 L t).view.writes (Elt F) fb [⟨Rect.whole S16x64, pay⟩] : sProp 𝕄)
      = oLoc d ↦[blockSet (blkNo (wL L) ⟨2 * t.val, two_mul_lt t⟩)]{fullShare} (Spec.bagSums fl tab) := by
  rw [pts_oBlkM0]
  refine pointsTo_congr fun i hi => ?_
  rw [← set_oBlkM0] at hi
  obtain ⟨y, -, rfl⟩ := Finset.mem_map.mp hi
  obtain ⟨g, c, rfl⟩ : ∃ (g : Fin 16) (c : Fin 64), y = ix2 g c := ⟨y 0, y 1, ix2_eta y⟩
  have hl : (oBlkM0 L t).view.writes (Elt F) fb [⟨Rect.whole S16x64, pay⟩] ((oBlkM0 L t).view.emb (ix2 g c)) = pay (ix2 g c) := by
    have h := View.read_writes_cons_emb (oBlkM0 L t).view fb (Rect.whole S16x64) pay [] (ix2 g c)
    rw [Rect.emb_whole_apply, View.read_apply, cast_eq] at h
    exact h
  rw [hl, hpay, View.read_apply, cast_eq, slot0M_emb, hW g c g.isLt, oBlkM0_emb]
  rfl

omit [Named F] in
/-- The same of half 1 and the odd block, block `2 t + 1`. -/
theorem out_vals1 (t : Fin k1_t1_loop.trips) (fb : Buf (Elt F) (oLoc d))
    (wbc : Buf (Elt F) ((sWb : Memref sig .scVector .vmem S2x16x64 .f32).view.loc (thr d L)))
    (pay : (Rect.whole S16x64).shape.Idx → Elt F .f32) (hpay : pay = (slot1M).view.read (Elt F) wbc)
    (hW : WbV d L fl tab (wL L).val (2 * t.val + 1) 1 16 wbc) :
    ((oBlkM1 L t).view.loc (thr d L) ↦[(oBlkM1 L t).view.set]{fullShare}
        (oBlkM1 L t).view.writes (Elt F) fb [⟨Rect.whole S16x64, pay⟩] : sProp 𝕄)
      = oLoc d ↦[blockSet (blkNo (wL L) ⟨2 * t.val + 1, two_mul_succ_lt t⟩)]{fullShare} (Spec.bagSums fl tab) := by
  rw [pts_oBlkM1]
  refine pointsTo_congr fun i hi => ?_
  rw [← set_oBlkM1] at hi
  obtain ⟨y, -, rfl⟩ := Finset.mem_map.mp hi
  obtain ⟨g, c, rfl⟩ : ∃ (g : Fin 16) (c : Fin 64), y = ix2 g c := ⟨y 0, y 1, ix2_eta y⟩
  have hl : (oBlkM1 L t).view.writes (Elt F) fb [⟨Rect.whole S16x64, pay⟩] ((oBlkM1 L t).view.emb (ix2 g c)) = pay (ix2 g c) := by
    have h := View.read_writes_cons_emb (oBlkM1 L t).view fb (Rect.whole S16x64) pay [] (ix2 g c)
    rw [Rect.emb_whole_apply, View.read_apply, cast_eq] at h
    exact h
  rw [hl, hpay, View.read_apply, cast_eq, slot1M_emb, hW g c g.isLt, oBlkM1_emb]
  rfl

end Tile

end Cert.Proof.Bag

end
-- ==== Proof.TileGlue.lean ====
/-
  Between block passes: what one pair loop leaves is what the next one needs of the scratches the index conversion does not
  rewrite — the other half's row numbers and column offsets, and the rows of the next block's first bag, whose words are
  the words after the block's sixteenth bag. And the bounds the indexed copies and the printed checks ask follow from the
  exact contents of the two halves.
-/
import proofs.«203835_g19404662243951_cont_8to1_399_35_alg».proof.Proof.TileFacts

noncomputable section

namespace Cert.Proof.Bag

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F] [Named F]

section Glue

variable (d : Dev nD) (L : grid1.Coords) (fl : IVec Spec.SFlat 32) (tab : FVec F Spec.STab .f32)

omit [FloatOps F] [Named F] in
/-- A word of the flat index array read at a natural position is a vocabulary index (zero outside the array). -/
theorem blkWord_le (hfl : ∀ n, (fl n).toNat ≤ 999999) (w b n : Nat) : (blkWord fl w b n).toNat ≤ 999999 := by
  unfold blkWord Spec.flatAt
  split
  · exact hfl _
  · decide

omit [FloatOps F] [Named F] in
/-- Both halves of the row-number scratch holding table rows of vocabulary indices, every word of it names a row of the table. -/
theorem TixB_of_TixV (w b b' : Nat) (g1 : Buf (Elt F) ((sTix : Memref sig .scVector .vmem S2048 .i32).view.loc (thr d L)))
    (hfl : ∀ n, (fl n).toNat ≤ 999999) (h0 : TixV d L fl w b 0 g1) (h1 : TixV d L fl w b' 1 g1) : TixB d L g1 := by
  intro i
  have hi : (i 0).val < 2048 := (i 0).isLt
  by_cases hlt : (i 0).val < 1024
  · have e : i = ix1 (⟨1024 * 0 + (i 0).val, by omega⟩ : Fin 2048) :=
      funext fun a => by match a with | ⟨0, _⟩ => exact Fin.ext (by show (i 0).val = 1024 * 0 + (i 0).val; omega)
    rw [e, h0 (i 0).val hlt (by decide)]
    exact TileMath.trow_lt _ (blkWord_le fl hfl _ _ _)
  · have e : i = ix1 (⟨1024 * 1 + ((i 0).val - 1024), by omega⟩ : Fin 2048) :=
      funext fun a => by match a with | ⟨0, _⟩ => exact Fin.ext (by show (i 0).val = 1024 * 1 + ((i 0).val - 1024); omega)
    rw [e, h1 ((i 0).val - 1024) (by omega) (by decide)]
    exact TileMath.trow_lt _ (blkWord_le fl hfl _ _ _)

omit [FloatOps F] [Named F] in
/-- Both halves of the column-offset scratch holding column offsets, every word of it is 0 or 64. -/
theorem RvB_of_RvV (w b b' : Nat) (g2 : Buf (Elt F) ((sRv : Memref sig .scVector .vmem S2048 .i32).view.loc (thr d L)))
    (h0 : RvV d L fl w b 0 g2) (h1 : RvV d L fl w b' 1 g2) : RvB d L g2 := by
  intro i
  have hi : (i 0).val < 2048 := (i 0).isLt
  by_cases hlt : (i 0).val < 1024
  · have e : i = ix1 (⟨1024 * 0 + (i 0).val, by omega⟩ : Fin 2048) :=
      funext fun a => by match a with | ⟨0, _⟩ => exact Fin.ext (by show (i 0).val = 1024 * 0 + (i 0).val; omega)
    rw [e, h0 (i 0).val hlt (by decide)]
    exact TileMath.tcol_cases _
  · have e : i = ix1 (⟨1024 * 1 + ((i 0).val - 1024), by omega⟩ : Fin 2048) :=
      funext fun a => by match a with | ⟨0, _⟩ => exact Fin.ext (by show (i 0).val = 1024 * 1 + ((i 0).val - 1024); omega)
    rw [e, h1 ((i 0).val - 1024) (by omega) (by decide)]
    exact TileMath.tcol_cases _

omit [Named F] in
/-- The rows after a block's sixteenth bag are the next block's first bag's. -/
theorem RowsV_next (w b : Nat) (r : Buf (Elt F) ((sRows : Memref sig .scVector .vmem S2x50x128 .f32).view.loc (thr d L)))
    (h : RowsV d L fl tab w b 16 0 r) : RowsV d L fl tab w (b + 1) 0 0 r := by
  intro j c
  rw [h j c, blkWord_next]

omit [Named F] in
/-- Nothing is claimed of a write-back slot before its first sum. -/
theorem WbV_zero (w b : Nat) (ib : Fin 2) (wb : Buf (Elt F) ((sWb : Memref sig .scVector .vmem S2x16x64 .f32).view.loc (thr d L))) :
    WbV d L fl tab w b ib 0 wb := fun g _ hg => absurd hg (Nat.not_lt_zero _)

omit [Named F] in
/-- What an even block's loop leaves for the odd block after it. -/
theorem even_to_odd (e : Nat) (r : Buf (Elt F) ((sRows : Memref sig .scVector .vmem S2x50x128 .f32).view.loc (thr d L)))
    (g1 : Buf (Elt F) ((sTix : Memref sig .scVector .vmem S2048 .i32).view.loc (thr d L)))
    (g2 : Buf (Elt F) ((sRv : Memref sig .scVector .vmem S2048 .i32).view.loc (thr d L)))
    (wb : Buf (Elt F) ((sWb : Memref sig .scVector .vmem S2x16x64 .f32).view.loc (thr d L)))
    (h : EvenV d L fl tab e 8 r g1 g2 wb) :
    TixV d L fl (wL L).val (e + 1) 1 g1 ∧ RvV d L fl (wL L).val (e + 1) 1 g2 ∧ RowsV d L fl tab (wL L).val (e + 1) 0 0 r := by
  obtain ⟨-, -, hT, hR, hRows, -⟩ := h
  exact ⟨hT, hR, RowsV_next d L fl tab _ _ r hRows⟩

omit [Named F] in
/-- What an odd block's loop leaves for the even block after it (there is one after every odd block but the last). -/
theorem odd_to_even (o : Nat) (ho : o < 7) (r : Buf (Elt F) ((sRows : Memref sig .scVector .vmem S2x50x128 .f32).view.loc (thr d L)))
    (g1 : Buf (Elt F) ((sTix : Memref sig .scVector .vmem S2048 .i32).view.loc (thr d L)))
    (g2 : Buf (Elt F) ((sRv : Memref sig .scVector .vmem S2048 .i32).view.loc (thr d L)))
    (wb : Buf (Elt F) ((sWb : Memref sig .scVector .vmem S2x16x64 .f32).view.loc (thr d L)))
    (h : OddV d L fl tab o 8 r g1 g2 wb) :
    TixV d L fl (wL L).val (o + 1) 0 g1 ∧ RvV d L fl (wL L).val (o + 1) 0 g2 ∧ RowsV d L fl tab (wL L).val (o + 1) 0 0 r := by
  obtain ⟨-, -, hnext, hRows, -⟩ := h
  obtain ⟨hT, hR⟩ := hnext ho
  exact ⟨hT, hR, RowsV_next d L fl tab _ _ r (hRows (Or.inr ho))⟩

/-- The first list of half 0 (the block's first bag) names rows of the table when half 0 holds block `b`'s table rows. -/
theorem hin_list0 (b : Nat) (g1 : Buf (Elt F) ((sTix : Memref sig .scVector .vmem S2048 .i32).view.loc (thr d L)))
    (hfl : ∀ n, (fl n).toNat ≤ 999999) (hT : TixV d L fl (wL L).val b 0 g1) :
    ∀ x, ((listM k1_off2 k1_off2_inb).view.read (Elt F) g1 x).toNat < S507904x128.size (gathers_S507904x128_S50x128).axis := by
  intro x
  have hx : (x 0).val < 50 := (x 0).isLt
  have h0 : k1_off2 0 = 0 := by rw [k1_off2_eq]; rfl
  have hb : k1_off2 0 + (x 0).val < 2048 := by omega
  have key := list_read d L g1 k1_off2 k1_off2_inb (show Fin 50 from x 0) hb
  have e : (ix1 (show Fin 50 from x 0) : S50.Idx) = x := funext fun a => by match a with | ⟨0, _⟩ => rfl
  rw [e] at key
  rw [key]
  have e2 : (ix1 (⟨k1_off2 0 + (x 0).val, hb⟩ : Fin 2048) : S2048.Idx) = ix1 (⟨1024 * 0 + (x 0).val, by omega⟩ : Fin 2048) := by
    congr 1
  rw [e2, hT (x 0).val (by omega) (by decide)]
  exact TileMath.trow_lt _ (blkWord_le fl hfl _ _ _)

end Glue

end Cert.Proof.Bag

end
-- ==== Proof.TileInit.lean ====
/-
  A gather in flight whose list is held at contents that agree, on the list, with other contents.
-/
import proofs.«203835_g19404662243951_cont_8to1_399_35_alg».proof.Proof.TilePre
import proofs.«203835_g19404662243951_cont_8to1_399_35_alg».proof.Proof.Pay
import proofs.«203835_g19404662243951_cont_8to1_399_35_alg».proof.Proof.TileAbbrev
import Idealize.ShloMosaic.Lib.Tactic

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid1.Coords)

omit [FloatOps F] [Named F] in
/-- A gather in flight over a list held at contents that agree, on the list, with other contents, is the flight at those. -/
theorem flight_list_congr (qt : PosShare TreeShare) (tab : FVec F Spec.STab .f32)
    (r : Buf (Elt F) ((sRows : Memref sig .scVector .vmem S2x50x128 .f32).view.loc (thr d L)))
    (ga gb : Buf (Elt F) ((sTix : Memref sig .scVector .vmem S2048 .i32).view.loc (thr d L)))
    (o : Fin 1 → Nat) (ho : ∀ a, o a + S50.size a ≤ S2048.size a) :
    iprop(⌜∀ i ∈ (listM o ho).view.set, ga i = gb i⌝
        ∗ Transfers.Flight countersEmb (thr d L) (SemLoc.dma cc1_scratch5.sem) (default : HIx 1) 204800
          iprop((((sRows : Memref sig .scVector .vmem S2x50x128 .f32).view.loc (thr d L) ↦[(h0M).view.set]{fullShare} r)
              ∗ ((sTix : Memref sig .scVector .vmem S2048 .i32).view.loc (thr d L) ↦[(listM o ho).view.set]{fullShare} ga))
            ∗ ((tV : Memref sig .scVector .hbm S507904x128 .f32).view.loc (thr d L) ↦[(tVM).view.set]{qt} tab)))
      ⊢ (Transfers.Flight countersEmb (thr d L) (SemLoc.dma cc1_scratch5.sem) (default : HIx 1) 204800
          iprop((((sRows : Memref sig .scVector .vmem S2x50x128 .f32).view.loc (thr d L) ↦[(h0M).view.set]{fullShare} r)
              ∗ ((sTix : Memref sig .scVector .vmem S2048 .i32).view.loc (thr d L) ↦[(listM o ho).view.set]{fullShare} gb))
            ∗ ((tV : Memref sig .scVector .hbm S507904x128 .f32).view.loc (thr d L) ↦[(tVM).view.set]{qt} tab)) : sProp 𝕄) := by
  iintro ⟨%h, H⟩
  rw [← pointsTo_congr (f := ga) (g := gb) h]
  iexact H

end Tile

end Cert.Proof.Bag

end
-- ==== Proof.TileWrites.lean ====
/-
  What a list of stores leaves in a buffer, element by element: a property that every store's payload has at each of its
  entries is a property of every element some store covers — whatever the buffer held before —; an element the newest
  store does not cover reads what the earlier stores left. And the two patterns the tile stores: the table row of a word
  at most 999999 is a row of the table, the column offset of any word is 0 or 64.
-/
import Idealize.ShloMosaic.Lib.Exec.Geometry
import proofs.«203835_g19404662243951_cont_8to1_399_35_alg».proof.Proof.TileMath

namespace Idealize.ShloMosaic.View

variable {sig : RefSig} {κ : Kind} {sp : Space} {s : Shape} {e : EltTy} {Val : EltTy → Type}

/-- A property of every entry of every piece's payload holds of every element some piece covers. -/
theorem read_writes_all (v : View sig κ sp s e) (f : v.ty.Contents Val) (Q : Val e → Prop) :
    ∀ L : List (Piece Val s e), (∀ p ∈ L, ∀ x : p.1.shape.Idx, Q (p.2 x)) →
      ∀ y : s.Idx, (∃ p ∈ L, y ∈ p.1.set) → Q (v.read Val (v.writes Val f L) y)
  | [], _, _, h => by obtain ⟨_, hm, _⟩ := h; exact absurd hm List.not_mem_nil
  | p :: L, hQ, y, h => by
    by_cases hy : y ∈ p.1.set
    · obtain ⟨x, rfl⟩ : ∃ x, p.1.emb x = y := p.1.exists_idx_of_mem hy
      obtain ⟨r, w⟩ := p
      rw [read_writes_cons_emb]
      exact hQ ⟨r, w⟩ List.mem_cons_self x
    · have hy' : y ∉ Finset.univ.map p.1.emb := by rwa [Rect.map_emb_univ]
      rw [writes_cons, read_slice_write_of_not_mem p.1 _ _ _ hy']
      refine read_writes_all v f Q L (fun p' hp' => hQ p' (List.mem_cons_of_mem _ hp')) y ?_
      obtain ⟨p', hm, hy''⟩ := h
      rcases List.mem_cons.mp hm with rfl | hm
      · exact absurd hy'' hy
      · exact ⟨p', hm, hy''⟩

/-- The same of a covered load's value read under another shape. -/
theorem cast_readCov_all [∀ e, Nonempty (Val e)] (Q : Val e → Prop) (v : View sig κ sp s e) (L : List (Piece Val s e))
    (B : LoadRect s) {t : Shape} (h : B.shape.ShapeCasts t) (hcov : ∀ y : s.Idx, ∃ p ∈ L, y ∈ p.1.set)
    (hQ : ∀ p ∈ L, ∀ x : p.1.shape.Idx, Q (p.2 x)) (j : t.Idx) : Q (shapeCast t (v.readCov L B) h j) :=
  read_writes_all v v.junk Q L hQ _ (hcov _)

/-- An element the newest store does not cover reads what the earlier stores left. -/
theorem read_writes_cons_of_not_mem (v : View sig κ sp s e) (f : v.ty.Contents Val) (p : Piece Val s e) (L : List (Piece Val s e))
    (y : s.Idx) (h : y ∉ p.1.set) : v.read Val (v.writes Val f (p :: L)) y = v.read Val (v.writes Val f L) y := by
  rw [writes_cons, read_slice_write_of_not_mem p.1 _ _ _ (by rwa [Rect.map_emb_univ])]

/-- A property of a list's head and of its tail's members is one of its members. -/
theorem forall_pieces_cons {Q : Piece Val s e → Prop} {p : Piece Val s e} {L : List (Piece Val s e)} (hp : Q p) (hL : ∀ p' ∈ L, Q p') :
    ∀ p' ∈ p :: L, Q p' := List.forall_mem_cons.mpr ⟨hp, hL⟩

theorem forall_pieces_nil {Q : Piece Val s e → Prop} : ∀ p' ∈ ([] : List (Piece Val s e)), Q p' :=
  fun _ h => absurd h List.not_mem_nil

end Idealize.ShloMosaic.View

namespace Cert.Proof.TileMath

open Idealize.ShloMosaic Cert.Proof.Spec

/-- The table rows of words at most 999999, read under another shape, are rows of the table. -/
theorem trowV_lt {s t : Shape} (X : IVec s 32) (hX : ∀ j, (X j).toNat ≤ 999999) (h : s.ShapeCasts t) (x : t.Idx) :
    (shapeCast t (addi (muli (shrui X (broadcast s 7#32)) (broadcast s 64#32)) (andi X (broadcast s 63#32))) h x).toNat < 507904 := by
  unfold shapeCast; rw [trow_lane]; exact trow_lt _ (hX _)

/-- The column offsets of any words, read under another shape, are 0 or 64. -/
theorem tcolV_cases {s t : Shape} (X : IVec s 32) (h : s.ShapeCasts t) (x : t.Idx) :
    shapeCast t (muli (andi (shrui X (broadcast s 6#32)) (broadcast s 1#32)) (broadcast s 64#32)) h x = 0#32
      ∨ shapeCast t (muli (andi (shrui X (broadcast s 6#32)) (broadcast s 1#32)) (broadcast s 64#32)) h x = 64#32 := by
  unfold shapeCast; rw [tcol_lane]; exact tcol_cases _

end Cert.Proof.TileMath
-- ==== Proof.TileConv.lean ====
/-
  The conversion of a block's index words, store by store: a sixteen-word load of the index scratch, covered by pieces that
  all hold one function of the position, reads that function; the stored table rows and column offsets of the loaded words
  are then one function of the position too, so a list of such stores leaves it at every position a store covers.
-/
import proofs.«203835_g19404662243951_cont_8to1_399_35_alg».proof.Proof.TileWrites
import Idealize.ShloMosaic.Lib.Pipeline.Value

namespace Idealize.ShloMosaic.View

variable {sig : RefSig} {κ : Kind} {sp : Space} {s : Shape} {e : EltTy} {Val : EltTy → Type}

/-- A run of `m` words at `off` inside the run of `n` words at `O`: every word of the first is a word of the second. -/
theorem unit_sub_unit1 {N : Nat} (O n off m : Nat)
    (inbP : ∀ a, (![O] : Fin 1 → Nat) a + (![n] : Fin 1 → Nat) a ≤ (⟨1, ![N]⟩ : Shape).size a)
    (inbB : ∀ a, (![off] : Fin 1 → Nat) a + (![m] : Fin 1 → Nat) a ≤ (⟨1, ![N]⟩ : Shape).size a)
    (h1 : O ≤ off) (h2 : off + m ≤ O + n) (x : (Rect.unit (s := ⟨1, ![N]⟩) ![off] ![m] inbB).shape.Idx) :
    (Rect.unit (s := ⟨1, ![N]⟩) ![off] ![m] inbB).emb x ∈ (Rect.unit (s := ⟨1, ![N]⟩) ![O] ![n] inbP).set := by
  rw [Rect.mem_set_unit]
  intro a
  obtain rfl : a = 0 := Subsingleton.elim _ _
  have hx : (x 0).val < m := (x 0).isLt
  show O ≤ off + 1 * (x 0).val ∧ off + 1 * (x 0).val < O + n
  omega

/-- A load covered by one of the pieces, all of which hold `G0` of the position, reads `G0` of the position. -/
theorem readCov_of_pieces [∀ e, Nonempty (Val e)] (v : View sig κ sp s e) (Ld : List (Piece Val s e)) (G0 : s.Idx → Val e)
    (hG0 : ∀ p ∈ Ld, ∀ x : p.1.shape.Idx, p.2 x = G0 (p.1.emb x)) (B : Rect s) (p : Piece Val s e) (hp : p ∈ Ld)
    (hsub : ∀ x : B.shape.Idx, B.emb x ∈ p.1.set) (x : B.shape.Idx) :
    v.readCov Ld B.toLoadRect x = G0 (B.emb x) :=
  read_writes_apply_of_pieces v v.junk G0 Ld hG0 _ ⟨p, hp, hsub x⟩

end Idealize.ShloMosaic.View

namespace Cert.Proof.TileMath

open Idealize.ShloMosaic Cert.Proof.Spec

variable {sig : RefSig} {κ : Kind} {sp : Space} {F : FTy → Type} [∀ e, Nonempty (Elt F e)] {N : Nat}

/-- The stored table rows of sixteen loaded words are the table rows of what the position holds. -/
theorem tconv_trow (v : View sig κ sp ⟨1, ![N]⟩ .i32) (Ld : List (View.Piece (Elt F) ⟨1, ![N]⟩ .i32)) (G0 : (⟨1, ![N]⟩ : Shape).Idx → BitVec 32)
    (hG0 : ∀ p ∈ Ld, ∀ x : p.1.shape.Idx, p.2 x = G0 (p.1.emb x)) (off : Nat)
    (inb : ∀ a, (![off] : Fin 1 → Nat) a + (![16] : Fin 1 → Nat) a ≤ (⟨1, ![N]⟩ : Shape).size a)
    (p : View.Piece (Elt F) ⟨1, ![N]⟩ .i32) (hp : p ∈ Ld)
    (hsub : ∀ x, (Rect.unit (s := ⟨1, ![N]⟩) ![off] ![16] inb).emb x ∈ p.1.set)
    (h1 : (Rect.unit (s := ⟨1, ![N]⟩) ![off] ![16] inb).toLoadRect.shape.ShapeCasts ⟨1, ![16]⟩) (h2 : (⟨1, ![16]⟩ : Shape).ShapeCasts ⟨1, ![16]⟩)
    (x : (⟨1, ![16]⟩ : Shape).Idx) :
    shapeCast ⟨1, ![16]⟩ (addi (muli (shrui (shapeCast ⟨1, ![16]⟩ (v.readCov Ld (Rect.unit (s := ⟨1, ![N]⟩) ![off] ![16] inb).toLoadRect) h1)
        (broadcast ⟨1, ![16]⟩ 7#32)) (broadcast ⟨1, ![16]⟩ 64#32))
      (andi (shapeCast ⟨1, ![16]⟩ (v.readCov Ld (Rect.unit (s := ⟨1, ![N]⟩) ![off] ![16] inb).toLoadRect) h1) (broadcast ⟨1, ![16]⟩ 63#32))) h2 x
      = trow (G0 ((Rect.unit (s := ⟨1, ![N]⟩) ![off] ![16] inb).emb x)) := by
  rw [shapeCast_self, trow_lane]
  show trow (v.readCov Ld (Rect.unit (s := ⟨1, ![N]⟩) ![off] ![16] inb).toLoadRect (Shape.reshapeEquiv h1 x)) = _
  rw [View.readCov_of_pieces v Ld G0 hG0 _ p hp hsub]
  congr 2
  exact congrArg _ (Shape.reshapeEquiv_self _ x)

/-- The stored column offsets likewise. -/
theorem tconv_tcol (v : View sig κ sp ⟨1, ![N]⟩ .i32) (Ld : List (View.Piece (Elt F) ⟨1, ![N]⟩ .i32)) (G0 : (⟨1, ![N]⟩ : Shape).Idx → BitVec 32)
    (hG0 : ∀ p ∈ Ld, ∀ x : p.1.shape.Idx, p.2 x = G0 (p.1.emb x)) (off : Nat)
    (inb : ∀ a, (![off] : Fin 1 → Nat) a + (![16] : Fin 1 → Nat) a ≤ (⟨1, ![N]⟩ : Shape).size a)
    (p : View.Piece (Elt F) ⟨1, ![N]⟩ .i32) (hp : p ∈ Ld)
    (hsub : ∀ x, (Rect.unit (s := ⟨1, ![N]⟩) ![off] ![16] inb).emb x ∈ p.1.set)
    (h1 : (Rect.unit (s := ⟨1, ![N]⟩) ![off] ![16] inb).toLoadRect.shape.ShapeCasts ⟨1, ![16]⟩) (h2 : (⟨1, ![16]⟩ : Shape).ShapeCasts ⟨1, ![16]⟩)
    (x : (⟨1, ![16]⟩ : Shape).Idx) :
    shapeCast ⟨1, ![16]⟩ (muli (andi (shrui (shapeCast ⟨1, ![16]⟩ (v.readCov Ld (Rect.unit (s := ⟨1, ![N]⟩) ![off] ![16] inb).toLoadRect) h1)
        (broadcast ⟨1, ![16]⟩ 6#32)) (broadcast ⟨1, ![16]⟩ 1#32)) (broadcast ⟨1, ![16]⟩ 64#32)) h2 x
      = tcol (G0 ((Rect.unit (s := ⟨1, ![N]⟩) ![off] ![16] inb).emb x)) := by
  rw [shapeCast_self, tcol_lane]
  show tcol (v.readCov Ld (Rect.unit (s := ⟨1, ![N]⟩) ![off] ![16] inb).toLoadRect (Shape.reshapeEquiv h1 x)) = _
  rw [View.readCov_of_pieces v Ld G0 hG0 _ p hp hsub]
  congr 2
  exact congrArg _ (Shape.reshapeEquiv_self _ x)

end Cert.Proof.TileMath
-- ==== Proof.TileEntry.lean ====
/-
  The values the two conversion scratches hold when the first pair loop is entered: the index scratch's two halves hold the
  worker's first two blocks of index words, so every store of the two conversions writes the table rows (column offsets) of
  the flat index words at its positions, and the scratches hold the table rows and column offsets of blocks 0 and 1.
-/
import proofs.«203835_g19404662243951_cont_8to1_399_35_alg».proof.Proof.TileFacts
import proofs.«203835_g19404662243951_cont_8to1_399_35_alg».proof.Proof.TileConv

noncomputable section

namespace Cert.Proof.Bag

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F] [Named F]

section Tile

variable (d : Dev nD) (L : grid1.Coords)

/-! ## The conversion's stores, at the loop's entry -/

/-- The flat index word a position of the index scratch holds while its halves hold blocks 0 and 1. -/
def G0 (fl : IVec Spec.SFlat 32) (A : Nat) : S2048.Idx → BitVec 32 := fun y => Spec.flatAt fl (A + (y 0).val)

omit [FloatOps F] [Named F] in
theorem Tix_of_writes (f : Buf (Elt F) ((sTix : Memref sig .scVector .vmem S2048 .i32).view.loc (thr d L)))
    (Lc : List (View.Piece (Elt F) S2048 .i32)) (G : S2048.Idx → BitVec 32)
    (hG : ∀ p ∈ Lc, ∀ x : p.1.shape.Idx, p.2 x = G (p.1.emb x)) (hcov : ∀ y : S2048.Idx, ∃ p ∈ Lc, y ∈ p.1.set) (i : S2048.Idx) :
    ((sTix : Memref sig .scVector .vmem S2048 .i32).view.writes (Elt F) f Lc) i = G i :=
  View.read_writes_apply_of_pieces (Val := Elt F) (sTix : Memref sig .scVector .vmem S2048 .i32).view f G Lc hG i (hcov i)

omit [FloatOps F] [Named F] in
theorem Rv_of_writes (f : Buf (Elt F) ((sRv : Memref sig .scVector .vmem S2048 .i32).view.loc (thr d L)))
    (Lc : List (View.Piece (Elt F) S2048 .i32)) (G : S2048.Idx → BitVec 32)
    (hG : ∀ p ∈ Lc, ∀ x : p.1.shape.Idx, p.2 x = G (p.1.emb x)) (hcov : ∀ y : S2048.Idx, ∃ p ∈ Lc, y ∈ p.1.set) (i : S2048.Idx) :
    ((sRv : Memref sig .scVector .vmem S2048 .i32).view.writes (Elt F) f Lc) i = G i :=
  View.read_writes_apply_of_pieces (Val := Elt F) (sRv : Memref sig .scVector .vmem S2048 .i32).view f G Lc hG i (hcov i)

omit [FloatOps F] [Named F] in
/-- The words a copy of 1024 of the worker's index words, those from its word `o` on, lands at position `o` of the index
    scratch. -/
theorem dma_G0 (fl : IVec Spec.SFlat 32) (c : BitVec 32) (o : Nat) (ho : o + 1024 ≤ 2048)
    (hc : k1_off1 L c = ![8192 * (wL L).val + o])
    (inbS : ∀ a, (k1_off1 L c) a + S1024.size a ≤ S262144.size a)
    (inbP : ∀ a, (![o] : Fin 1 → Nat) a + S1024.size a ≤ S2048.size a) (x : S1024.Idx) :
    ReadAs.same.apply (View.read (Elt F) ((iV : Memref sig .scVector .hbm S262144 .i32).slice (Rect.unit (s := S262144) (k1_off1 L c) S1024.size inbS) (fun _ => rfl)).view fl) x
      = G0 fl (8192 * (wL L).val) ((Rect.unit (s := S2048) ![o] S1024.size inbP).emb x) := by
  have hx : (x 0).val < 1024 := (x 0).isLt
  have hw : (wL L).val < 32 := (wL L).isLt
  unfold G0
  have hn : 8192 * (wL L).val + (((Rect.unit (s := S2048) ![o] S1024.size inbP).emb x) 0).val < 262144 := by
    show 8192 * (wL L).val + (o + 1 * (x 0).val) < 262144
    omega
  rw [TileMath.flatAt_eq fl _ hn, ReadAs.apply_same, View.read_apply, cast_eq]
  congr 1
  funext a; apply Fin.ext
  match a with
  | ⟨0, _⟩ =>
    show (k1_off1 L c) 0 + 1 * (x 0).val = 8192 * (wL L).val + (o + 1 * (x 0).val)
    rw [hc]
    show 8192 * (wL L).val + o + 1 * (x 0).val = _
    omega

omit [FloatOps F] [Named F] in
theorem off1_0 : k1_off1 L 0#32 = ![8192 * (wL L).val + 0] := by
  have h := k1_off1_eq L ⟨0, by decide⟩
  have hwv : (wL L).val = (L 1).val * 2 + (L 0).val := rfl
  rw [show (0#32 : BitVec 32) = BitVec.ofNat 32 (1024 * (⟨0, by decide⟩ : Fin 2).val) from rfl, h, hwv]
  congr 1
  show 16384 * (L 1).val + 8192 * (L 0).val + 1024 * 0 = 8192 * ((L 1).val * 2 + (L 0).val) + 0
  omega
omit [FloatOps F] [Named F] in
theorem off1_1 : k1_off1 L 1024#32 = ![8192 * (wL L).val + 1024] := by
  have h := k1_off1_eq L ⟨1, by decide⟩
  have hwv : (wL L).val = (L 1).val * 2 + (L 0).val := rfl
  rw [show (1024#32 : BitVec 32) = BitVec.ofNat 32 (1024 * (⟨1, by decide⟩ : Fin 2).val) from rfl, h, hwv]
  congr 1
  show 16384 * (L 1).val + 8192 * (L 0).val + 1024 * 1 = 8192 * ((L 1).val * 2 + (L 0).val) + 1024
  omega

omit [FloatOps F] [Named F] in
theorem flatAt_le (fl : IVec Spec.SFlat 32) (hfl : ∀ n, (fl n).toNat ≤ 999999) (n : Nat) : (Spec.flatAt fl n).toNat ≤ 999999 := by
  unfold Spec.flatAt
  split
  · exact hfl _
  · decide

/-- What the two scratches hold at the first loop's entry, from their words' closed form. -/
theorem entry_facts (fl : IVec Spec.SFlat 32) (hfl : ∀ n, (fl n).toNat ≤ 999999)
    (g1 : Buf (Elt F) ((sTix : Memref sig .scVector .vmem S2048 .i32).view.loc (thr d L)))
    (g2 : Buf (Elt F) ((sRv : Memref sig .scVector .vmem S2048 .i32).view.loc (thr d L)))
    (h1 : ∀ i : S2048.Idx, g1 i = Spec.trow (G0 fl (8192 * (wL L).val) i))
    (h2 : ∀ i : S2048.Idx, g2 i = Spec.tcol (G0 fl (8192 * (wL L).val) i)) :
    TixB d L g1 ∧ RvB d L g2 ∧ TixV d L fl (wL L).val 0 0 g1 ∧ RvV d L fl (wL L).val 0 0 g2
      ∧ TixV d L fl (wL L).val (0 + 1) 1 g1 ∧ RvV d L fl (wL L).val (0 + 1) 1 g2 := by
  refine ⟨fun i => ?_, fun i => ?_, fun n hn hh => ?_, fun n hn hh => ?_, fun n hn hh => ?_, fun n hn hh => ?_⟩
  · show (g1 i).toNat < 507904
    rw [h1]; exact TileMath.trow_lt _ (flatAt_le fl hfl _)
  · show g2 i = 0#32 ∨ g2 i = 64#32
    rw [h2]; exact TileMath.tcol_cases _
  · rw [h1]; unfold G0 blkWord; congr 2
    show 8192 * (wL L).val + (1024 * 0 + n) = 8192 * (wL L).val + 1024 * 0 + n
    omega
  · rw [h2]; unfold G0 blkWord; congr 2
    show 8192 * (wL L).val + (1024 * 0 + n) = 8192 * (wL L).val + 1024 * 0 + n
    omega
  · rw [h1]; unfold G0 blkWord; congr 2
    show 8192 * (wL L).val + (1024 * 1 + n) = 8192 * (wL L).val + 1024 * (0 + 1) + n
    omega
  · rw [h2]; unfold G0 blkWord; congr 2
    show 8192 * (wL L).val + (1024 * 1 + n) = 8192 * (wL L).val + 1024 * (0 + 1) + n
    omega

end Tile

end Cert.Proof.Bag

end
-- ==== Proof.TileConv2.lean ====
/-
  The conversion of one block's index words into one half of a scratch, store by store, over whatever the scratch held: a
  sixteen-word load inside the newest copy landed in the index scratch reads that copy's words; sixty-four stores that
  tile a half leave their payloads there and the other half as it was.
-/
import proofs.«203835_g19404662243951_cont_8to1_399_35_alg».proof.Proof.TileConv
import Idealize.ShloMosaic.Lib.ValueIdx

namespace Idealize.ShloMosaic.View

open Idealize.ShloMosaic.ValueIdx

variable {sig : RefSig} {κ : Kind} {sp : Space} {e : EltTy} {Val : EltTy → Type} {N : Nat}

/-- A run of `m` words at `off` inside the newest piece, a run of `n` words at `O`, reads that piece's payload at `off - O`
    onwards — whatever the older pieces hold. -/
theorem readCov_head_unit [∀ e, Nonempty (Val e)] (v : View sig κ sp ⟨1, ![N]⟩ e) (O n off m : Nat)
    (inbP : ∀ a, (![O] : Fin 1 → Nat) a + (![n] : Fin 1 → Nat) a ≤ (⟨1, ![N]⟩ : Shape).size a)
    (inbB : ∀ a, (![off] : Fin 1 → Nat) a + (![m] : Fin 1 → Nat) a ≤ (⟨1, ![N]⟩ : Shape).size a)
    (w : (Rect.unit (s := ⟨1, ![N]⟩) ![O] ![n] inbP).shape.Idx → Val e) (L : List (Piece Val ⟨1, ![N]⟩ e))
    (h1 : O ≤ off) (h2 : off + m ≤ O + n) (x : (Rect.unit (s := ⟨1, ![N]⟩) ![off] ![m] inbB).shape.Idx) :
    v.readCov (⟨Rect.unit (s := ⟨1, ![N]⟩) ![O] ![n] inbP, w⟩ :: L) (Rect.unit (s := ⟨1, ![N]⟩) ![off] ![m] inbB).toLoadRect x
      = w (ix1 (⟨off - O + (x 0).val, by have hx : (x 0).val < m := (x 0).isLt; omega⟩ : Fin n)) := by
  have hx : (x 0).val < m := (x 0).isLt
  have he : (Rect.unit (s := ⟨1, ![N]⟩) ![off] ![m] inbB).emb x
      = (Rect.unit (s := ⟨1, ![N]⟩) ![O] ![n] inbP).emb (ix1 (⟨off - O + (x 0).val, by omega⟩ : Fin n)) := by
    funext a; apply Fin.ext
    match a with
    | ⟨0, _⟩ => show off + 1 * (x 0).val = O + 1 * (off - O + (x 0).val); omega
  show v.read Val (v.writes Val v.junk (⟨Rect.unit (s := ⟨1, ![N]⟩) ![O] ![n] inbP, w⟩ :: L)) ((Rect.unit (s := ⟨1, ![N]⟩) ![off] ![m] inbB).emb x) = _
  rw [he]
  exact read_writes_cons_emb v v.junk _ w L _

/-- Whether every piece of `L` is a sixteen-word run inside `[O, O + 1024)` of a one-axis shape; -/
def Piece.inHalf (L : List (Piece Val ⟨1, ![N]⟩ e)) (O : Nat) : Bool :=
  decide (∀ p ∈ L, O ≤ p.1.off 0 ∧ p.1.off 0 + p.1.stride 0 * (p.1.size 0 - 1) < O + 1024)

/-- then a position outside that range is in none of them. -/
theorem not_mem_of_inHalf (L : List (Piece Val ⟨1, ![N]⟩ e)) (O : Nat) (h : Piece.inHalf L O = true) (y : (⟨1, ![N]⟩ : Shape).Idx)
    (hy : (y 0).val < O ∨ O + 1024 ≤ (y 0).val) : ∀ p ∈ L, y ∉ p.1.set := by
  have h := of_decide_eq_true h
  intro p hp hm
  obtain ⟨j, hj, e0⟩ := (p.1.mem_set.mp hm) 0
  have := h p hp
  have hle : p.1.stride 0 * j ≤ p.1.stride 0 * (p.1.size 0 - 1) := Nat.mul_le_mul_left _ (by omega)
  omega

/-- Whether the pieces of `L` include the sixty-four sixteen-word unit-stride runs that tile `[O, O + 1024)`; -/
def Piece.tilesHalf (L : List (Piece Val ⟨1, ![N]⟩ e)) (O : Nat) : Bool :=
  decide (∀ k : Fin 64, ∃ p ∈ L, p.1.off 0 = O + 16 * k.val ∧ p.1.size 0 = 16 ∧ p.1.stride 0 = 1)

/-- then every position of the range is in one of them. -/
theorem mem_of_tilesHalf (L : List (Piece Val ⟨1, ![N]⟩ e)) (O : Nat) (h : Piece.tilesHalf L O = true) (y : (⟨1, ![N]⟩ : Shape).Idx)
    (hy : O ≤ (y 0).val ∧ (y 0).val < O + 1024) : ∃ p ∈ L, y ∈ p.1.set := by
  have h := of_decide_eq_true h
  obtain ⟨p, hp, hoff, hsize, hstride⟩ := h ⟨((y 0).val - O) / 16, by omega⟩
  refine ⟨p, hp, p.1.mem_set.mpr fun a => ?_⟩
  match a with
  | ⟨0, _⟩ =>
    refine ⟨((y 0).val - O) % 16, ?_, ?_⟩
    · show ((y 0).val - O) % 16 < p.1.size 0
      rw [hsize]; exact Nat.mod_lt _ (by decide)
    · show (y 0).val = p.1.off 0 + p.1.stride 0 * (((y 0).val - O) % 16)
      rw [hoff, hstride]
      show (y 0).val = O + 16 * (((y 0).val - O) / 16) + 1 * (((y 0).val - O) % 16)
      omega

end Idealize.ShloMosaic.View

namespace Cert.Proof.TileMath

open Idealize.ShloMosaic Idealize.ShloMosaic.ValueIdx Cert.Proof.Spec

variable {sig : RefSig} {κ : Kind} {sp : Space} {F : FTy → Type} [∀ e, Nonempty (Elt F e)] {N : Nat}

/-- The stored table rows of sixteen words loaded from inside the newest landed copy: the table rows of the copy's words. -/
theorem tconv_trow_head (v : View sig κ sp ⟨1, ![N]⟩ .i32) (O n off : Nat)
    (inbP : ∀ a, (![O] : Fin 1 → Nat) a + (![n] : Fin 1 → Nat) a ≤ (⟨1, ![N]⟩ : Shape).size a)
    (inbB : ∀ a, (![off] : Fin 1 → Nat) a + (![16] : Fin 1 → Nat) a ≤ (⟨1, ![N]⟩ : Shape).size a)
    (w : (Rect.unit (s := ⟨1, ![N]⟩) ![O] ![n] inbP).shape.Idx → BitVec 32) (L : List (View.Piece (Elt F) ⟨1, ![N]⟩ .i32))
    (Wf : Nat → BitVec 32) (hw : ∀ x', w x' = Wf (x' 0).val) (h1 : O ≤ off) (h2 : off + 16 ≤ O + n)
    (hc1 : (Rect.unit (s := ⟨1, ![N]⟩) ![off] ![16] inbB).toLoadRect.shape.ShapeCasts ⟨1, ![16]⟩) (hc2 : (⟨1, ![16]⟩ : Shape).ShapeCasts ⟨1, ![16]⟩)
    (x : (⟨1, ![16]⟩ : Shape).Idx) :
    shapeCast ⟨1, ![16]⟩ (addi (muli (shrui (shapeCast ⟨1, ![16]⟩ (v.readCov (⟨Rect.unit (s := ⟨1, ![N]⟩) ![O] ![n] inbP, w⟩ :: L) (Rect.unit (s := ⟨1, ![N]⟩) ![off] ![16] inbB).toLoadRect) hc1)
        (broadcast ⟨1, ![16]⟩ 7#32)) (broadcast ⟨1, ![16]⟩ 64#32))
      (andi (shapeCast ⟨1, ![16]⟩ (v.readCov (⟨Rect.unit (s := ⟨1, ![N]⟩) ![O] ![n] inbP, w⟩ :: L) (Rect.unit (s := ⟨1, ![N]⟩) ![off] ![16] inbB).toLoadRect) hc1) (broadcast ⟨1, ![16]⟩ 63#32))) hc2 x
      = trow (Wf (off - O + (x 0).val)) := by
  rw [shapeCast_self, trow_lane]
  show trow (v.readCov (⟨Rect.unit (s := ⟨1, ![N]⟩) ![O] ![n] inbP, w⟩ :: L) (Rect.unit (s := ⟨1, ![N]⟩) ![off] ![16] inbB).toLoadRect (Shape.reshapeEquiv hc1 x)) = _
  rw [View.readCov_head_unit (Val := Elt F) v O n off 16 inbP inbB w L h1 h2, hw]
  congr 2
  show off - O + ((Shape.reshapeEquiv hc1 x) 0).val = off - O + (x 0).val
  rw [Shape.reshapeEquiv_self]

/-- The stored column offsets likewise. -/
theorem tconv_tcol_head (v : View sig κ sp ⟨1, ![N]⟩ .i32) (O n off : Nat)
    (inbP : ∀ a, (![O] : Fin 1 → Nat) a + (![n] : Fin 1 → Nat) a ≤ (⟨1, ![N]⟩ : Shape).size a)
    (inbB : ∀ a, (![off] : Fin 1 → Nat) a + (![16] : Fin 1 → Nat) a ≤ (⟨1, ![N]⟩ : Shape).size a)
    (w : (Rect.unit (s := ⟨1, ![N]⟩) ![O] ![n] inbP).shape.Idx → BitVec 32) (L : List (View.Piece (Elt F) ⟨1, ![N]⟩ .i32))
    (Wf : Nat → BitVec 32) (hw : ∀ x', w x' = Wf (x' 0).val) (h1 : O ≤ off) (h2 : off + 16 ≤ O + n)
    (hc1 : (Rect.unit (s := ⟨1, ![N]⟩) ![off] ![16] inbB).toLoadRect.shape.ShapeCasts ⟨1, ![16]⟩) (hc2 : (⟨1, ![16]⟩ : Shape).ShapeCasts ⟨1, ![16]⟩)
    (x : (⟨1, ![16]⟩ : Shape).Idx) :
    shapeCast ⟨1, ![16]⟩ (muli (andi (shrui (shapeCast ⟨1, ![16]⟩ (v.readCov (⟨Rect.unit (s := ⟨1, ![N]⟩) ![O] ![n] inbP, w⟩ :: L) (Rect.unit (s := ⟨1, ![N]⟩) ![off] ![16] inbB).toLoadRect) hc1)
        (broadcast ⟨1, ![16]⟩ 6#32)) (broadcast ⟨1, ![16]⟩ 1#32)) (broadcast ⟨1, ![16]⟩ 64#32)) hc2 x
      = tcol (Wf (off - O + (x 0).val)) := by
  rw [shapeCast_self, tcol_lane]
  show tcol (v.readCov (⟨Rect.unit (s := ⟨1, ![N]⟩) ![O] ![n] inbP, w⟩ :: L) (Rect.unit (s := ⟨1, ![N]⟩) ![off] ![16] inbB).toLoadRect (Shape.reshapeEquiv hc1 x)) = _
  rw [View.readCov_head_unit (Val := Elt F) v O n off 16 inbP inbB w L h1 h2, hw]
  congr 2
  show off - O + ((Shape.reshapeEquiv hc1 x) 0).val = off - O + (x 0).val
  rw [Shape.reshapeEquiv_self]

end Cert.Proof.TileMath
-- ==== Proof.TileConv3.lean ====
/-
  A list of stores that tiles a run of words in descending order — each a sixteen-word unit-stride run ending where the
  previous one begins —, checked by one pass over the list: such stores cover every position of the run and none outside.
-/
import proofs.«203835_g19404662243951_cont_8to1_399_35_alg».proof.Proof.TileConv2

namespace Idealize.ShloMosaic.View

variable {sig : RefSig} {κ : Kind} {sp : Space} {e : EltTy} {Val : EltTy → Type} {N : Nat}

/-- Whether the stores of `L`, newest first, are sixteen-word unit-stride runs that descend from `cur` down to `lo` without
    a gap. -/
def Piece.chain (lo : Nat) : List (Piece Val ⟨1, ![N]⟩ e) → Nat → Bool
  | [], cur => decide (cur = lo)
  | p :: L, cur => decide (p.1.off 0 + 16 = cur) && (decide (p.1.size 0 = 16) && (decide (p.1.stride 0 = 1) && Piece.chain lo L (p.1.off 0)))

theorem chain_spec (lo : Nat) : ∀ (L : List (Piece Val ⟨1, ![N]⟩ e)) (cur : Nat), Piece.chain lo L cur = true →
    lo ≤ cur ∧ (∀ y : (⟨1, ![N]⟩ : Shape).Idx, lo ≤ (y 0).val → (y 0).val < cur → ∃ p ∈ L, y ∈ p.1.set)
      ∧ (∀ p ∈ L, ∀ y : (⟨1, ![N]⟩ : Shape).Idx, y ∈ p.1.set → lo ≤ (y 0).val ∧ (y 0).val < cur)
  | [], cur, h => by
    have hc : cur = lo := of_decide_eq_true h
    subst hc
    exact ⟨Nat.le_refl _, fun y h1 h2 => absurd h2 (by omega), fun p hp => absurd hp List.not_mem_nil⟩
  | p :: L, cur, h => by
    have h' : decide (p.1.off 0 + 16 = cur) = true ∧ decide (p.1.size 0 = 16) = true ∧ decide (p.1.stride 0 = 1) = true
        ∧ Piece.chain lo L (p.1.off 0) = true := by
      simpa [Piece.chain, Bool.and_eq_true] using h
    obtain ⟨h1, h2, h3, h4⟩ := h'
    have hoff : p.1.off 0 + 16 = cur := of_decide_eq_true h1
    have hsize : p.1.size 0 = 16 := of_decide_eq_true h2
    have hstride : p.1.stride 0 = 1 := of_decide_eq_true h3
    obtain ⟨ih1, ih2, ih3⟩ := chain_spec lo L (p.1.off 0) h4
    refine ⟨by omega, fun y hy1 hy2 => ?_, fun p' hp' y hy => ?_⟩
    · by_cases hlt : (y 0).val < p.1.off 0
      · obtain ⟨p', hp', hm⟩ := ih2 y hy1 hlt
        exact ⟨p', List.mem_cons_of_mem _ hp', hm⟩
      · refine ⟨p, List.mem_cons_self, p.1.mem_set.mpr fun a => ?_⟩
        match a with
        | ⟨0, _⟩ =>
          refine ⟨(y 0).val - p.1.off 0, ?_, ?_⟩
          · show (y 0).val - p.1.off 0 < p.1.size 0
            rw [hsize]; omega
          · show (y 0).val = p.1.off 0 + p.1.stride 0 * ((y 0).val - p.1.off 0)
            rw [hstride]; omega
    · rcases List.mem_cons.mp hp' with rfl | hp''
      · obtain ⟨j, hj, e0⟩ := (p'.1.mem_set.mp hy) 0
        have hj' : j < 16 := by rw [← hsize]; exact hj
        have e0' : (y 0).val = p'.1.off 0 + p'.1.stride 0 * j := e0
        rw [hstride] at e0'
        omega
      · have := ih3 p' hp'' y hy
        omega

/-- Every position of the run is in one of the stores; -/
theorem mem_of_chain (L : List (Piece Val ⟨1, ![N]⟩ e)) (lo cur : Nat) (h : Piece.chain lo L cur = true)
    (y : (⟨1, ![N]⟩ : Shape).Idx) (hy : lo ≤ (y 0).val ∧ (y 0).val < cur) : ∃ p ∈ L, y ∈ p.1.set :=
  (chain_spec lo L cur h).2.1 y hy.1 hy.2

/-- a position outside the run is in none. -/
theorem not_mem_of_chain (L : List (Piece Val ⟨1, ![N]⟩ e)) (lo cur : Nat) (h : Piece.chain lo L cur = true)
    (y : (⟨1, ![N]⟩ : Shape).Idx) (hy : (y 0).val < lo ∨ cur ≤ (y 0).val) : ∀ p ∈ L, y ∉ p.1.set := by
  intro p hp hm
  have := (chain_spec lo L cur h).2.2 p hp y hm
  omega

end Idealize.ShloMosaic.View
-- ==== Proof.TileConvSite.lean ====
/-
  One conversion inside the block passes, as facts of the two scratches: sixty-four stores over whatever a scratch held,
  tiling one half, whose payloads are the table rows (column offsets) of a block's words, leave that half holding the
  block's table rows (column offsets) and the other half as it was.
-/
import proofs.«203835_g19404662243951_cont_8to1_399_35_alg».proof.Proof.TileEntry
import proofs.«203835_g19404662243951_cont_8to1_399_35_alg».proof.Proof.TileConv3
import proofs.«203835_g19404662243951_cont_8to1_399_35_alg».proof.Proof.TileGlue

noncomputable section

namespace Cert.Proof.Bag

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F] [Named F]

section Tile

variable (d : Dev nD) (L : grid1.Coords) (fl : IVec Spec.SFlat 32)

omit [FloatOps F] [Named F] in
/-- The words a copy of block `bk` of the worker's index words carries. -/
theorem dma_blk (c0 : Fin 1 → Nat) (bk : Nat) (hbk : bk < 8) (hc : c0 = ![8192 * (wL L).val + 1024 * bk])
    (inbS : ∀ a, c0 a + S1024.size a ≤ S262144.size a) (x : S1024.Idx) :
    ReadAs.same.apply (View.read (Elt F) ((iV : Memref sig .scVector .hbm S262144 .i32).slice (Rect.unit (s := S262144) c0 S1024.size inbS) (fun _ => rfl)).view fl) x
      = blkWord fl (wL L).val bk (x 0).val := by
  have hx : (x 0).val < 1024 := (x 0).isLt
  have hw : (wL L).val < 32 := (wL L).isLt
  unfold blkWord
  have hn : 8192 * (wL L).val + 1024 * bk + (x 0).val < 262144 := by omega
  rw [TileMath.flatAt_eq fl _ hn, ReadAs.apply_same, View.read_apply, cast_eq]
  congr 1
  funext a; apply Fin.ext
  match a with
  | ⟨0, _⟩ =>
    show c0 0 + 1 * (x 0).val = 8192 * (wL L).val + 1024 * bk + (x 0).val
    rw [hc]
    show 8192 * (wL L).val + 1024 * bk + 1 * (x 0).val = _
    omega

omit [FloatOps F] [Named F] in
theorem off4_blk (t : Fin k1_t1_loop.trips) : k1_off4 L t = ![8192 * (wL L).val + 1024 * (2 * t.val + 1)] := by
  have hwv : (wL L).val = (L 1).val * 2 + (L 0).val := rfl
  rw [k1_off4_eq L t, hwv]
  congr 1
  omega
omit [FloatOps F] [Named F] in
theorem off62_blk (t : Fin k1_t1_loop.trips) : k1_off62 L t = ![8192 * (wL L).val + 1024 * (2 * t.val + 3)] := by
  have hwv : (wL L).val = (L 1).val * 2 + (L 0).val := rfl
  rw [k1_off62_eq L t, hwv]
  congr 1
  omega
omit [FloatOps F] [Named F] in
theorem off5_blk (t : Fin k1_t1_loop.trips) : k1_off5 L t = ![8192 * (wL L).val + 1024 * (2 * t.val + 2)] := by
  have hwv : (wL L).val = (L 1).val * 2 + (L 0).val := rfl
  rw [k1_off5_eq L t, hwv]
  congr 1
  omega

omit [FloatOps F] [Named F] in
/-- Sixty-four stores tiling half `h` with the table rows of block `bk`'s words leave that half holding them. -/
theorem conv_TixV (g : Buf (Elt F) ((sTix : Memref sig .scVector .vmem S2048 .i32).view.loc (thr d L)))
    (Lc : List (View.Piece (Elt F) S2048 .i32)) (w bk h : Nat)
    (hG : ∀ p ∈ Lc, ∀ x : p.1.shape.Idx, p.2 x = Spec.trow (blkWord fl w bk (((p.1.emb x) 0).val - 1024 * h)))
    (htile : View.Piece.chain (1024 * h) Lc (1024 * h + 1024) = true) :
    TixV d L fl w bk h ((sTix : Memref sig .scVector .vmem S2048 .i32).view.writes (Elt F) g Lc) := by
  intro n hn hh
  have key := View.read_writes_apply_of_pieces (Val := Elt F) (sTix : Memref sig .scVector .vmem S2048 .i32).view g
    (fun y : S2048.Idx => Spec.trow (blkWord fl w bk ((y 0).val - 1024 * h))) Lc hG
    (ix1 (⟨1024 * h + n, by omega⟩ : Fin 2048))
    (View.mem_of_chain Lc (1024 * h) (1024 * h + 1024) htile _ (by show 1024 * h ≤ 1024 * h + n ∧ 1024 * h + n < 1024 * h + 1024; omega))
  refine Eq.trans key ?_
  show Spec.trow (blkWord fl w bk (1024 * h + n - 1024 * h)) = _
  rw [Nat.add_sub_cancel_left]

omit [FloatOps F] [Named F] in
/-- The same for the column offsets. -/
theorem conv_RvV (g : Buf (Elt F) ((sRv : Memref sig .scVector .vmem S2048 .i32).view.loc (thr d L)))
    (Lc : List (View.Piece (Elt F) S2048 .i32)) (w bk h : Nat)
    (hG : ∀ p ∈ Lc, ∀ x : p.1.shape.Idx, p.2 x = Spec.tcol (blkWord fl w bk (((p.1.emb x) 0).val - 1024 * h)))
    (htile : View.Piece.chain (1024 * h) Lc (1024 * h + 1024) = true) :
    RvV d L fl w bk h ((sRv : Memref sig .scVector .vmem S2048 .i32).view.writes (Elt F) g Lc) := by
  intro n hn hh
  have key := View.read_writes_apply_of_pieces (Val := Elt F) (sRv : Memref sig .scVector .vmem S2048 .i32).view g
    (fun y : S2048.Idx => Spec.tcol (blkWord fl w bk ((y 0).val - 1024 * h))) Lc hG
    (ix1 (⟨1024 * h + n, by omega⟩ : Fin 2048))
    (View.mem_of_chain Lc (1024 * h) (1024 * h + 1024) htile _ (by show 1024 * h ≤ 1024 * h + n ∧ 1024 * h + n < 1024 * h + 1024; omega))
  refine Eq.trans key ?_
  show Spec.tcol (blkWord fl w bk (1024 * h + n - 1024 * h)) = _
  rw [Nat.add_sub_cancel_left]

omit [FloatOps F] [Named F] in
/-- Stores inside a run of 1024 words leave a word outside it as it was. -/
theorem keep_word (g : Buf (Elt F) ((sTix : Memref sig .scVector .vmem S2048 .i32).view.loc (thr d L)))
    (Lc : List (View.Piece (Elt F) S2048 .i32)) (O : Nat) (hin : View.Piece.chain O Lc (O + 1024) = true) (i : S2048.Idx)
    (hi : (i 0).val < O ∨ O + 1024 ≤ (i 0).val) :
    ((sTix : Memref sig .scVector .vmem S2048 .i32).view.writes (Elt F) g Lc) i = g i :=
  View.read_writes_apply_of_forall_not_mem (Val := Elt F) (sTix : Memref sig .scVector .vmem S2048 .i32).view g i Lc
    (View.not_mem_of_chain Lc O (O + 1024) hin i hi)

omit [FloatOps F] [Named F] in
/-- Stores inside half `h` leave the other half's table rows. -/
theorem keep_TixV (g : Buf (Elt F) ((sTix : Memref sig .scVector .vmem S2048 .i32).view.loc (thr d L)))
    (Lc : List (View.Piece (Elt F) S2048 .i32)) (w bk h hk : Nat) (hne : hk ≠ h) (hh : h < 2)
    (hin : View.Piece.chain (1024 * h) Lc (1024 * h + 1024) = true) (hold : TixV d L fl w bk hk g) :
    TixV d L fl w bk hk ((sTix : Memref sig .scVector .vmem S2048 .i32).view.writes (Elt F) g Lc) := by
  intro n hn hhk
  rw [← hold n hn hhk]
  exact View.read_writes_apply_of_forall_not_mem (Val := Elt F) (sTix : Memref sig .scVector .vmem S2048 .i32).view g
    (ix1 (⟨1024 * hk + n, by omega⟩ : Fin 2048)) Lc
    (View.not_mem_of_chain Lc (1024 * h) (1024 * h + 1024) hin _ (by show 1024 * hk + n < 1024 * h ∨ 1024 * h + 1024 ≤ 1024 * hk + n; omega))

omit [FloatOps F] [Named F] in
theorem keep_RvV (g : Buf (Elt F) ((sRv : Memref sig .scVector .vmem S2048 .i32).view.loc (thr d L)))
    (Lc : List (View.Piece (Elt F) S2048 .i32)) (w bk h hk : Nat) (hne : hk ≠ h) (hh : h < 2)
    (hin : View.Piece.chain (1024 * h) Lc (1024 * h + 1024) = true) (hold : RvV d L fl w bk hk g) :
    RvV d L fl w bk hk ((sRv : Memref sig .scVector .vmem S2048 .i32).view.writes (Elt F) g Lc) := by
  intro n hn hhk
  rw [← hold n hn hhk]
  exact View.read_writes_apply_of_forall_not_mem (Val := Elt F) (sRv : Memref sig .scVector .vmem S2048 .i32).view g
    (ix1 (⟨1024 * hk + n, by omega⟩ : Fin 2048)) Lc
    (View.not_mem_of_chain Lc (1024 * h) (1024 * h + 1024) hin _ (by show 1024 * hk + n < 1024 * h ∨ 1024 * h + 1024 ≤ 1024 * hk + n; omega))

variable (tab : FVec F Spec.STab .f32)

omit [Named F] in
/-- An even block's loop entry: half 0 holds the block (handed over), half 1 has just been converted from the next block. -/
theorem even_entry (e : Nat) (Po : Prop)
    (r : Buf (Elt F) ((sRows : Memref sig .scVector .vmem S2x50x128 .f32).view.loc (thr d L)))
    (g1 : Buf (Elt F) ((sTix : Memref sig .scVector .vmem S2048 .i32).view.loc (thr d L)))
    (g2 : Buf (Elt F) ((sRv : Memref sig .scVector .vmem S2048 .i32).view.loc (thr d L)))
    (wb : Buf (Elt F) ((sWb : Memref sig .scVector .vmem S2x16x64 .f32).view.loc (thr d L)))
    (L1 L2 : List (View.Piece (Elt F) S2048 .i32)) (hfl : ∀ n, (fl n).toNat ≤ 999999)
    (hT0 : TixV d L fl (wL L).val e 0 g1) (hR0 : RvV d L fl (wL L).val e 0 g2) (hRows : RowsV d L fl tab (wL L).val e (2 * 0) 0 r)
    (hG1 : ∀ p ∈ L1, ∀ x : p.1.shape.Idx, p.2 x = Spec.trow (blkWord fl (wL L).val (e + 1) (((p.1.emb x) 0).val - 1024 * 1)))
    (hc1 : View.Piece.chain (1024 * 1) L1 (1024 * 1 + 1024) = true)
    (hG2 : ∀ p ∈ L2, ∀ x : p.1.shape.Idx, p.2 x = Spec.tcol (blkWord fl (wL L).val (e + 1) (((p.1.emb x) 0).val - 1024 * 1)))
    (hc2 : View.Piece.chain (1024 * 1) L2 (1024 * 1 + 1024) = true) (hPo : Po) :
    TixB d L ((sTix : Memref sig .scVector .vmem S2048 .i32).view.writes (Elt F) g1 L1)
      ∧ RvB d L ((sRv : Memref sig .scVector .vmem S2048 .i32).view.writes (Elt F) g2 L2) ∧ Po
      ∧ EvenV d L fl tab e 0 r ((sTix : Memref sig .scVector .vmem S2048 .i32).view.writes (Elt F) g1 L1)
          ((sRv : Memref sig .scVector .vmem S2048 .i32).view.writes (Elt F) g2 L2) wb := by
  have a0 := keep_TixV d L fl g1 L1 (wL L).val e 1 0 (by decide) (by decide) hc1 hT0
  have b0 := keep_RvV d L fl g2 L2 (wL L).val e 1 0 (by decide) (by decide) hc2 hR0
  have a1 := conv_TixV d L fl g1 L1 (wL L).val (e + 1) 1 hG1 hc1
  have b1 := conv_RvV d L fl g2 L2 (wL L).val (e + 1) 1 hG2 hc2
  exact ⟨TixB_of_TixV d L fl _ _ _ _ hfl a0 a1, RvB_of_RvV d L fl _ _ _ _ b0 b1, hPo, a0, b0, a1, b1, hRows, WbV_zero d L fl tab _ _ _ _⟩

omit [Named F] in
/-- An odd block's loop entry (not the last): half 1 holds the block (handed over), half 0 has just been converted from the
    next block. -/
theorem odd_entry (o : Nat) (Po : Prop)
    (r : Buf (Elt F) ((sRows : Memref sig .scVector .vmem S2x50x128 .f32).view.loc (thr d L)))
    (g1 : Buf (Elt F) ((sTix : Memref sig .scVector .vmem S2048 .i32).view.loc (thr d L)))
    (g2 : Buf (Elt F) ((sRv : Memref sig .scVector .vmem S2048 .i32).view.loc (thr d L)))
    (wb : Buf (Elt F) ((sWb : Memref sig .scVector .vmem S2x16x64 .f32).view.loc (thr d L)))
    (L1 L2 : List (View.Piece (Elt F) S2048 .i32)) (hfl : ∀ n, (fl n).toNat ≤ 999999)
    (hT1 : TixV d L fl (wL L).val o 1 g1) (hR1 : RvV d L fl (wL L).val o 1 g2) (hRows : RowsV d L fl tab (wL L).val o (2 * 0) 0 r)
    (hG1 : ∀ p ∈ L1, ∀ x : p.1.shape.Idx, p.2 x = Spec.trow (blkWord fl (wL L).val (o + 1) (((p.1.emb x) 0).val - 1024 * 0)))
    (hc1 : View.Piece.chain (1024 * 0) L1 (1024 * 0 + 1024) = true)
    (hG2 : ∀ p ∈ L2, ∀ x : p.1.shape.Idx, p.2 x = Spec.tcol (blkWord fl (wL L).val (o + 1) (((p.1.emb x) 0).val - 1024 * 0)))
    (hc2 : View.Piece.chain (1024 * 0) L2 (1024 * 0 + 1024) = true) (hPo : Po) :
    TixB d L ((sTix : Memref sig .scVector .vmem S2048 .i32).view.writes (Elt F) g1 L1)
      ∧ RvB d L ((sRv : Memref sig .scVector .vmem S2048 .i32).view.writes (Elt F) g2 L2) ∧ Po
      ∧ OddV d L fl tab o 0 r ((sTix : Memref sig .scVector .vmem S2048 .i32).view.writes (Elt F) g1 L1)
          ((sRv : Memref sig .scVector .vmem S2048 .i32).view.writes (Elt F) g2 L2) wb := by
  have a1 := keep_TixV d L fl g1 L1 (wL L).val o 0 1 (by decide) (by decide) hc1 hT1
  have b1 := keep_RvV d L fl g2 L2 (wL L).val o 0 1 (by decide) (by decide) hc2 hR1
  have a0 := conv_TixV d L fl g1 L1 (wL L).val (o + 1) 0 hG1 hc1
  have b0 := conv_RvV d L fl g2 L2 (wL L).val (o + 1) 0 hG2 hc2
  exact ⟨TixB_of_TixV d L fl _ _ _ _ hfl a0 a1, RvB_of_RvV d L fl _ _ _ _ b0 b1, hPo, a1, b1, fun _ => ⟨a0, b0⟩, fun _ => hRows,
    WbV_zero d L fl tab _ _ _ _⟩

end Tile

end Cert.Proof.Bag

namespace Cert.Proof.TileMath

open Idealize.ShloMosaic Idealize.ShloMosaic.ValueIdx Cert.Proof.Spec

variable {sig : RefSig} {κ : Kind} {sp : Space} {F : FTy → Type} [∀ e, Nonempty (Elt F e)] {N : Nat}

/-- The head-piece conversion step in the form a list of stores' agreement asks: at the store's own position. -/
theorem tconv_trow_at (v : View sig κ sp ⟨1, ![N]⟩ .i32) (O n off : Nat)
    (inbP : ∀ a, (![O] : Fin 1 → Nat) a + (![n] : Fin 1 → Nat) a ≤ (⟨1, ![N]⟩ : Shape).size a)
    (inbB : ∀ a, (![off] : Fin 1 → Nat) a + (![16] : Fin 1 → Nat) a ≤ (⟨1, ![N]⟩ : Shape).size a)
    (w : (Rect.unit (s := ⟨1, ![N]⟩) ![O] ![n] inbP).shape.Idx → BitVec 32) (L : List (View.Piece (Elt F) ⟨1, ![N]⟩ .i32))
    (Wf : Nat → BitVec 32) (hw : ∀ x', w x' = Wf (x' 0).val) (h1 : O ≤ off) (h2 : off + 16 ≤ O + n)
    (hc1 : (Rect.unit (s := ⟨1, ![N]⟩) ![off] ![16] inbB).toLoadRect.shape.ShapeCasts ⟨1, ![16]⟩) (hc2 : (⟨1, ![16]⟩ : Shape).ShapeCasts ⟨1, ![16]⟩)
    (x : (⟨1, ![16]⟩ : Shape).Idx) :
    shapeCast ⟨1, ![16]⟩ (addi (muli (shrui (shapeCast ⟨1, ![16]⟩ (v.readCov (⟨Rect.unit (s := ⟨1, ![N]⟩) ![O] ![n] inbP, w⟩ :: L) (Rect.unit (s := ⟨1, ![N]⟩) ![off] ![16] inbB).toLoadRect) hc1)
        (broadcast ⟨1, ![16]⟩ 7#32)) (broadcast ⟨1, ![16]⟩ 64#32))
      (andi (shapeCast ⟨1, ![16]⟩ (v.readCov (⟨Rect.unit (s := ⟨1, ![N]⟩) ![O] ![n] inbP, w⟩ :: L) (Rect.unit (s := ⟨1, ![N]⟩) ![off] ![16] inbB).toLoadRect) hc1) (broadcast ⟨1, ![16]⟩ 63#32))) hc2 x
      = trow (Wf ((((Rect.unit (s := ⟨1, ![N]⟩) ![off] ![16] inbB).emb x) 0).val - O)) := by
  rw [tconv_trow_head v O n off inbP inbB w L Wf hw h1 h2 hc1 hc2 x]
  congr 2
  show off - O + (x 0).val = off + 1 * (x 0).val - O
  omega

theorem tconv_tcol_at (v : View sig κ sp ⟨1, ![N]⟩ .i32) (O n off : Nat)
    (inbP : ∀ a, (![O] : Fin 1 → Nat) a + (![n] : Fin 1 → Nat) a ≤ (⟨1, ![N]⟩ : Shape).size a)
    (inbB : ∀ a, (![off] : Fin 1 → Nat) a + (![16] : Fin 1 → Nat) a ≤ (⟨1, ![N]⟩ : Shape).size a)
    (w : (Rect.unit (s := ⟨1, ![N]⟩) ![O] ![n] inbP).shape.Idx → BitVec 32) (L : List (View.Piece (Elt F) ⟨1, ![N]⟩ .i32))
    (Wf : Nat → BitVec 32) (hw : ∀ x', w x' = Wf (x' 0).val) (h1 : O ≤ off) (h2 : off + 16 ≤ O + n)
    (hc1 : (Rect.unit (s := ⟨1, ![N]⟩) ![off] ![16] inbB).toLoadRect.shape.ShapeCasts ⟨1, ![16]⟩) (hc2 : (⟨1, ![16]⟩ : Shape).ShapeCasts ⟨1, ![16]⟩)
    (x : (⟨1, ![16]⟩ : Shape).Idx) :
    shapeCast ⟨1, ![16]⟩ (muli (andi (shrui (shapeCast ⟨1, ![16]⟩ (v.readCov (⟨Rect.unit (s := ⟨1, ![N]⟩) ![O] ![n] inbP, w⟩ :: L) (Rect.unit (s := ⟨1, ![N]⟩) ![off] ![16] inbB).toLoadRect) hc1)
        (broadcast ⟨1, ![16]⟩ 6#32)) (broadcast ⟨1, ![16]⟩ 1#32)) (broadcast ⟨1, ![16]⟩ 64#32)) hc2 x
      = tcol (Wf ((((Rect.unit (s := ⟨1, ![N]⟩) ![off] ![16] inbB).emb x) 0).val - O)) := by
  rw [tconv_tcol_head v O n off inbP inbB w L Wf hw h1 h2 hc1 hc2 x]
  congr 2
  show off - O + (x 0).val = off + 1 * (x 0).val - O
  omega

end Cert.Proof.TileMath

namespace Cert.Proof.Bag

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F] [Named F]

section Steps

variable (d : Dev nD) (L : grid1.Coords) (fl : IVec Spec.SFlat 32)

omit [Named F] in
/-- The conversion step with the landed copy spelt out: the newest piece of the index scratch is the copy of block `bk`. -/
theorem step_trow [∀ e, Nonempty (Elt F e)] (c0 : Fin 1 → Nat) (bk : Nat) (hbk : bk < 8) (hc : c0 = ![8192 * (wL L).val + 1024 * bk])
    (inbS : ∀ a, c0 a + S1024.size a ≤ S262144.size a) (O off : Nat)
    (inbP : ∀ a, (![O] : Fin 1 → Nat) a + (![1024] : Fin 1 → Nat) a ≤ S2048.size a)
    (inbB : ∀ a, (![off] : Fin 1 → Nat) a + (![16] : Fin 1 → Nat) a ≤ S2048.size a)
    (Lr : List (View.Piece (Elt F) S2048 .i32)) (h1 : O ≤ off) (h2 : off + 16 ≤ O + 1024)
    (hc1 : (Rect.unit (s := S2048) ![off] ![16] inbB).toLoadRect.shape.ShapeCasts ⟨1, ![16]⟩) (hc2 : (⟨1, ![16]⟩ : Shape).ShapeCasts ⟨1, ![16]⟩)
    (x : (⟨1, ![16]⟩ : Shape).Idx) :
    shapeCast ⟨1, ![16]⟩ (addi (muli (shrui (shapeCast ⟨1, ![16]⟩ ((sIdx : Memref sig .scVector .vmem S2048 .i32).view.readCov
        (⟨Rect.unit (s := S2048) ![O] ![1024] inbP, ReadAs.same.apply (View.read (Elt F) ((iV : Memref sig .scVector .hbm S262144 .i32).slice (Rect.unit (s := S262144) c0 S1024.size inbS) (fun _ => rfl)).view fl)⟩ :: Lr)
        (Rect.unit (s := S2048) ![off] ![16] inbB).toLoadRect) hc1)
        (broadcast ⟨1, ![16]⟩ 7#32)) (broadcast ⟨1, ![16]⟩ 64#32))
      (andi (shapeCast ⟨1, ![16]⟩ ((sIdx : Memref sig .scVector .vmem S2048 .i32).view.readCov
        (⟨Rect.unit (s := S2048) ![O] ![1024] inbP, ReadAs.same.apply (View.read (Elt F) ((iV : Memref sig .scVector .hbm S262144 .i32).slice (Rect.unit (s := S262144) c0 S1024.size inbS) (fun _ => rfl)).view fl)⟩ :: Lr)
        (Rect.unit (s := S2048) ![off] ![16] inbB).toLoadRect) hc1) (broadcast ⟨1, ![16]⟩ 63#32))) hc2 x
      = Spec.trow (blkWord fl (wL L).val bk ((((Rect.unit (s := S2048) ![off] ![16] inbB).emb x) 0).val - O)) :=
  TileMath.tconv_trow_at _ O 1024 off inbP inbB _ Lr (blkWord fl (wL L).val bk)
    (fun x' => dma_blk (F := F) L fl c0 bk hbk hc inbS x') h1 h2 hc1 hc2 x

omit [Named F] in
theorem step_tcol [∀ e, Nonempty (Elt F e)] (c0 : Fin 1 → Nat) (bk : Nat) (hbk : bk < 8) (hc : c0 = ![8192 * (wL L).val + 1024 * bk])
    (inbS : ∀ a, c0 a + S1024.size a ≤ S262144.size a) (O off : Nat)
    (inbP : ∀ a, (![O] : Fin 1 → Nat) a + (![1024] : Fin 1 → Nat) a ≤ S2048.size a)
    (inbB : ∀ a, (![off] : Fin 1 → Nat) a + (![16] : Fin 1 → Nat) a ≤ S2048.size a)
    (Lr : List (View.Piece (Elt F) S2048 .i32)) (h1 : O ≤ off) (h2 : off + 16 ≤ O + 1024)
    (hc1 : (Rect.unit (s := S2048) ![off] ![16] inbB).toLoadRect.shape.ShapeCasts ⟨1, ![16]⟩) (hc2 : (⟨1, ![16]⟩ : Shape).ShapeCasts ⟨1, ![16]⟩)
    (x : (⟨1, ![16]⟩ : Shape).Idx) :
    shapeCast ⟨1, ![16]⟩ (muli (andi (shrui (shapeCast ⟨1, ![16]⟩ ((sIdx : Memref sig .scVector .vmem S2048 .i32).view.readCov
        (⟨Rect.unit (s := S2048) ![O] ![1024] inbP, ReadAs.same.apply (View.read (Elt F) ((iV : Memref sig .scVector .hbm S262144 .i32).slice (Rect.unit (s := S262144) c0 S1024.size inbS) (fun _ => rfl)).view fl)⟩ :: Lr)
        (Rect.unit (s := S2048) ![off] ![16] inbB).toLoadRect) hc1)
        (broadcast ⟨1, ![16]⟩ 6#32)) (broadcast ⟨1, ![16]⟩ 1#32)) (broadcast ⟨1, ![16]⟩ 64#32)) hc2 x
      = Spec.tcol (blkWord fl (wL L).val bk ((((Rect.unit (s := S2048) ![off] ![16] inbB).emb x) 0).val - O)) :=
  TileMath.tconv_tcol_at _ O 1024 off inbP inbB _ Lr (blkWord fl (wL L).val bk)
    (fun x' => dma_blk (F := F) L fl c0 bk hbk hc inbS x') h1 h2 hc1 hc2 x

end Steps

end Cert.Proof.Bag

end
-- ==== Proof.TileList.lean ====
/-
  A bag's list of fifty row numbers in the row-number scratch, as positions; and the step that drops a store not covering
  a position from the list of stores a buffer's contents are written by.
-/
import proofs.«203835_g19404662243951_cont_8to1_399_35_alg».proof.Proof.TileAbbrev
import proofs.«203835_g19404662243951_cont_8to1_399_35_alg».proof.Proof.TileWrites

noncomputable section

namespace Cert.Proof.Bag

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI Idealize.SL.Sem

variable {F : FTy → Type}

/-- The list at offset `o` covers the positions `o 0 ≤ n < o 0 + 50`. -/
theorem mem_listM (o : Fin 1 → Nat) (ho : ∀ a, o a + S50.size a ≤ S2048.size a) (i : S2048.Idx) :
    i ∈ (listM o ho).view.set ↔ o 0 ≤ (i 0).val ∧ (i 0).val < o 0 + 50 := by
  simp only [Memref.view_slice, Memref.view_whole, View.set_slice_whole]
  rw [Rect.mem_set_unit]
  constructor
  · intro h; exact h 0
  · intro h a
    match a with
    | ⟨0, _⟩ => exact h

/-- A position outside a sixteen-word store at a literal offset. -/
theorem not_mem_store (off : Nat) (inb : ∀ a, (![off] : Fin 1 → Nat) a + S16.size a ≤ S2048.size a) (i : S2048.Idx)
    (h : (i 0).val < off ∨ off + 16 ≤ (i 0).val) : i ∉ (Rect.unit (s := S2048) ![off] S16.size inb).set := by
  intro hm
  have h0 := (Rect.mem_set_unit.mp hm) 0
  have e1 : (![off] : Fin 1 → Nat) 0 = off := rfl
  have e2 : S16.size 0 = 16 := rfl
  rw [e1, e2] at h0
  omega

/-- Drops the newest store of the list a buffer's contents are written by, the position not being one of its sixteen. -/
macro "peel_store" : tactic =>
  `(tactic| (refine (Idealize.ShloMosaic.View.read_writes_cons_of_not_mem _ _ _ _ _ (Cert.Proof.Bag.not_mem_store _ _ _ (by omega))).trans ?_))

end Cert.Proof.Bag

end
-- ==== Proof.TileAcc.lean ====
/-
  One bag's accumulation and its write-back rows, as pure facts: a sixteen-lane load of a gathered row at the row's
  column offset adds the row's term to an accumulator, so the four accumulators after `n` rows are the bag's partial
  sums of `n` terms; a store of sixteen lanes of a bag's sums into the write-back scratch extends what the scratch is
  known to hold.
-/
import proofs.«203835_g19404662243951_cont_8to1_399_35_alg».proof.Proof.TileVal

noncomputable section

namespace Cert.Proof.Bag

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F] [Named F]

section Tile

variable (d : Dev nD) (L : grid1.Coords)
variable (fl : IVec Spec.SFlat 32) (tab : FVec F Spec.STab .f32)

/-! ## The accumulate -/

/-- Row `j` of bag `g` of block `b`: the table's row for the bag's `j`-th word, read at column `x`; and the word's
    column offset. -/
def rowF (w b g : Nat) (j x : Nat) : F .f32 := Spec.tabAt tab (Spec.trow (blkWord fl w b (64 * g + j))).toNat x
def offF (w b g : Nat) (j : Nat) : Nat := (Spec.tcol (blkWord fl w b (64 * g + j))).toNat

/-- A sixteen-lane load of row `n` of a slot holding bag `g`'s rows, at the row's column offset word plus sixteen
    times the accumulator's number, read as a vector of sixteen: the row's term for that accumulator. -/
theorem load_acc (w b g : Nat) (sl : Fin 2)
    (r : Buf (Elt F) ((sRows : Memref sig .scVector .vmem S2x50x128 .f32).view.loc (thr d L)))
    (hR : RowsV d L fl tab w b g sl r) (n : Fin 50) (i : Fin 4) (c : BitVec 32) (hc : c = BitVec.ofNat 32 (16 * i.val))
    (rw : BitVec 32) (hrw : rw = Spec.tcol (blkWord fl w b (64 * g + n.val)))
    (off : Fin 3 → Nat) (hoff : off = ![sl.val, n.val, (rw + c).toNat])
    (inb : ∀ a, off a + S1x1x16.size a ≤ S2x50x128.size a) (hcast : S1x1x16.ShapeCasts S16) :
    shapeCast S16 ((sRows : Memref sig .scVector .vmem S2x50x128 .f32).view.readAt (Elt F)
        (Rect.unit (s := S2x50x128) off S1x1x16.size inb).toLoadRect r) hcast
      = fun l => rowF fl tab w b g n.val (offF fl w b g n.val + (16 * i.val + (l 0).val)) := by
  subst hoff hc hrw
  funext l
  have hl : (l 0).val < 16 := (l 0).isLt
  have hi := i.isLt
  have hre : Shape.reshapeEquiv hcast l = ix3 (0 : Fin 1) (0 : Fin 1) (⟨(l 0).val, hl⟩ : Fin 16) :=
    Shape.reshapeEquiv_eq_of_rowMajor hcast (by
      rw [Shape.rowMajor_val_three, Shape.rowMajor_val_one]
      show ((0 * 1 + 0) * 16 + (l 0).val) = (l 0).val
      omega)
  have hsum : (Spec.tcol (blkWord fl w b (64 * g + n.val)) + BitVec.ofNat 32 (16 * i.val)).toNat
      = (Spec.tcol (blkWord fl w b (64 * g + n.val))).toNat + 16 * i.val := by
    rw [BitVec.toNat_add, BitVec.toNat_ofNat]
    rcases TileMath.tcol_toNat_cases (blkWord fl w b (64 * g + n.val)) with h | h <;> rw [h] <;> omega
  have hcol : (Spec.tcol (blkWord fl w b (64 * g + n.val))).toNat + (16 * i.val + (l 0).val) < 128 :=
    TileMath.tcol_add_lt (blkWord fl w b (64 * g + n.val)) (16 * i.val + (l 0).val) (by omega) |> fun h => by omega
  have key := hR n ⟨(Spec.tcol (blkWord fl w b (64 * g + n.val))).toNat + (16 * i.val + (l 0).val), hcol⟩
  unfold shapeCast rowF offF
  rw [rows_load, hre]
  refine Eq.trans ?_ key
  congr 1
  funext a; apply Fin.ext
  match a with
  | ⟨0, _⟩ => rfl
  | ⟨1, _⟩ => rfl
  | ⟨2, _⟩ =>
    show (Spec.tcol (blkWord fl w b (64 * g + n.val)) + BitVec.ofNat 32 (16 * i.val)).toNat + (l 0).val
      = (Spec.tcol (blkWord fl w b (64 * g + n.val))).toNat + (16 * i.val + (l 0).val)
    rw [hsum]; omega

/-- So an accumulator holding the bag's accumulation of `n` rows holds, after the load of row `n` is added, that of
    `n + 1` rows. -/
theorem acc_step (w b g : Nat) (sl : Fin 2)
    (r : Buf (Elt F) ((sRows : Memref sig .scVector .vmem S2x50x128 .f32).view.loc (thr d L)))
    (hR : RowsV d L fl tab w b g sl r) (n : Fin 50) (i : Fin 4) (c : BitVec 32) (hc : c = BitVec.ofNat 32 (16 * i.val))
    (rw : BitVec 32) (hrw : rw = Spec.tcol (blkWord fl w b (64 * g + n.val)))
    (off : Fin 3 → Nat) (hoff : off = ![sl.val, n.val, (rw + c).toNat])
    (inb : ∀ a, off a + S1x1x16.size a ≤ S2x50x128.size a) (hcast : S1x1x16.ShapeCasts S16) :
    addf (AccMath.accVec (rowF fl tab w b g) (offF fl w b g) i.val n.val)
        (shapeCast S16 ((sRows : Memref sig .scVector .vmem S2x50x128 .f32).view.readAt (Elt F)
          (Rect.unit (s := S2x50x128) off S1x1x16.size inb).toLoadRect r) hcast)
      = AccMath.accVec (rowF fl tab w b g) (offF fl w b g) i.val (n.val + 1) := by
  rw [load_acc d L fl tab w b g sl r hR n i c hc rw hrw off hoff inb hcast, AccMath.accVec_succ]

omit [Named F] d L in
/-- After the fifty rows, lane `l` of accumulator `i` is the bag's sum at column `16 i + l`. -/
theorem acc_final (w b g : Nat) (i : Fin 4) (l : (⟨1, ![16]⟩ : Shape).Idx) :
    AccMath.accVec (rowF fl tab w b g) (offF fl w b g) i.val 50 l
      = Spec.bagPartial fl tab (128 * w + 16 * b + g) (16 * i.val + (l 0).val) 50 := by
  have hl : (l 0).val < 16 := (l 0).isLt
  have hi := i.isLt
  exact AccMath.accAt_eq_bagPartial fl tab (128 * w + 16 * b + g) (rowF fl tab w b g) (offF fl w b g) _ (by omega)
    (fun j _ x _ => by unfold rowF; rw [blkWord_eq]) (fun j _ => by unfold offF; rw [blkWord_eq]) 50 (Nat.le_refl _)

/-! ## The write-back scratch -/

/-- Half `ib` of the write-back scratch holds the sums of block `b`'s bags at the entries `K` names. -/
def WbK (w b : Nat) (ib : Fin 2) (K : Fin 16 → Fin 64 → Prop)
    (wb : Buf (Elt F) ((sWb : Memref sig .scVector .vmem S2x16x64 .f32).view.loc (thr d L))) : Prop :=
  ∀ (g : Fin 16) (c : Fin 64), K g c → wb (ix3 ib g c) = Spec.bagPartial fl tab (128 * w + 16 * b + g.val) c.val 50

omit [Named F] in
theorem WbV_iff_WbK (w b : Nat) (ib : Fin 2) (n : Nat) (wb : Buf (Elt F) ((sWb : Memref sig .scVector .vmem S2x16x64 .f32).view.loc (thr d L))) :
    WbV d L fl tab w b ib n wb ↔ WbK d L fl tab w b ib (fun g _ => g.val < n) wb :=
  ⟨fun h g c hg => h g c hg, fun h g c hg => h g c hg⟩

/-- A store of sixteen lanes of bag `g`'s sums at columns `16 i …` of row `g` of half `ib` adds those entries to what
    the half is known to hold. -/
theorem WbK_write (w b : Nat) (ib : Fin 2) (K : Fin 16 → Fin 64 → Prop)
    (wb : Buf (Elt F) ((sWb : Memref sig .scVector .vmem S2x16x64 .f32).view.loc (thr d L)))
    (hK : WbK d L fl tab w b ib K wb) (g : Fin 16) (i : Fin 4)
    (off : Fin 3 → Nat) (hoff : off = ![ib.val, g.val, 16 * i.val])
    (inb : ∀ a, off a + S1x1x16.size a ≤ S2x16x64.size a) (P : S1x1x16.Idx → Elt F .f32)
    (hP : ∀ x : S1x1x16.Idx, P x = Spec.bagPartial fl tab (128 * w + 16 * b + g.val) (16 * i.val + (x 2).val) 50) :
    WbK d L fl tab w b ib (fun g' c' => K g' c' ∨ (g' = g ∧ 16 * i.val ≤ c'.val ∧ c'.val < 16 * i.val + 16))
      (View.write (Elt F) ((sWb : Memref sig .scVector .vmem S2x16x64 .f32).view.slice (Rect.unit (s := S2x16x64) off S1x1x16.size inb)) wb P Finset.univ) := by
  subst hoff
  intro g' c' hK'
  by_cases hcov : g' = g ∧ 16 * i.val ≤ c'.val ∧ c'.val < 16 * i.val + 16
  · obtain ⟨rfl, hlo, hhi⟩ := hcov
    have hx : ((sWb : Memref sig .scVector .vmem S2x16x64 .f32).view.slice (Rect.unit (s := S2x16x64) ![ib.val, g'.val, 16 * i.val] S1x1x16.size inb)).emb
        (ix3 (0 : Fin 1) (0 : Fin 1) (⟨c'.val - 16 * i.val, by omega⟩ : Fin 16)) = ix3 ib g' c' := by
      funext a; apply Fin.ext
      match a with
      | ⟨0, _⟩ => show ib.val + 1 * 0 = ib.val; omega
      | ⟨1, _⟩ => show g'.val + 1 * 0 = g'.val; omega
      | ⟨2, _⟩ => show 16 * i.val + 1 * (c'.val - 16 * i.val) = c'.val; omega
    rw [← hx, View.write_emb_of_mem _ _ (Finset.mem_univ _), cast_eq, hP]
    congr 1
    show 16 * i.val + (c'.val - 16 * i.val) = c'.val
    omega
  · have hKg : K g' c' := hK'.resolve_right hcov
    rw [← hK g' c' hKg]
    refine View.write_of_not_mem _ _ _ fun hmem => hcov ?_
    obtain ⟨x, -, hx⟩ := Finset.mem_map.mp (show _ ∈ Finset.map _ _ from hmem)
    have h1 := congrArg (fun y : S2x16x64.Idx => (y 1).val) hx
    have h2 := congrArg (fun y : S2x16x64.Idx => (y 2).val) hx
    have hx1 : (x 1).val < 1 := (x 1).isLt
    have hx2 : (x 2).val < 16 := (x 2).isLt
    change g.val + 1 * (x 1).val = g'.val at h1
    change 16 * i.val + 1 * (x 2).val = c'.val at h2
    exact ⟨Fin.ext (by omega), by omega, by omega⟩

/-- A store into the other half leaves a half's known entries. -/
theorem WbK_write_other (w b : Nat) (ib ib' : Fin 2) (hne : ib' ≠ ib) (K : Fin 16 → Fin 64 → Prop)
    (wb : Buf (Elt F) ((sWb : Memref sig .scVector .vmem S2x16x64 .f32).view.loc (thr d L)))
    (hK : WbK d L fl tab w b ib K wb) (off : Fin 3 → Nat) (hoff : off 0 = ib'.val)
    (inb : ∀ a, off a + S1x1x16.size a ≤ S2x16x64.size a) (P : S1x1x16.Idx → Elt F .f32) :
    WbK d L fl tab w b ib K
      (View.write (Elt F) ((sWb : Memref sig .scVector .vmem S2x16x64 .f32).view.slice (Rect.unit (s := S2x16x64) off S1x1x16.size inb)) wb P Finset.univ) := by
  intro g' c' hK'
  rw [← hK g' c' hK']
  refine View.write_of_not_mem _ _ _ fun hmem => hne ?_
  obtain ⟨x, -, hx⟩ := Finset.mem_map.mp (show _ ∈ Finset.map _ _ from hmem)
  have h0 := congrArg (fun y : S2x16x64.Idx => (y 0).val) hx
  have hx0 : (x 0).val < 1 := (x 0).isLt
  change off 0 + 1 * (x 0).val = ib.val at h0
  exact Fin.ext (by omega)

end Tile

end Cert.Proof.Bag

end
-- ==== Proof.TilePairVal.lean ====
/-
  The glue between a pair loop's trip and the value lemmas: the column-offset word the body extracts for a row, the
  accumulators' start, the payload a bag's sums are stored with, and the write-back scratch after a bag's four stores.
-/
import proofs.«203835_g19404662243951_cont_8to1_399_35_alg».proof.Proof.TileAcc
import proofs.«203835_g19404662243951_cont_8to1_399_35_alg».proof.Proof.TileFacts

noncomputable section

namespace Cert.Proof.Bag

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F] [Named F]

section Tile

variable (d : Dev nD) (L : grid1.Coords)
variable (fl : IVec Spec.SFlat 32) (tab : FVec F Spec.STab .f32)

/-- Word `m` of a sixteen-word load of the column-offset scratch at offset `off` is word `off + m` of the scratch. -/
theorem rv_extract (g2 : Buf (Elt F) ((sRv : Memref sig .scVector .vmem S2048 .i32).view.loc (thr d L)))
    (off : Fin 1 → Nat) (inb : ∀ a, off a + S16.size a ≤ S2048.size a) (hc : S16.ShapeCasts S16) (m : Nat) (hm : m < 16)
    (hsl : S16.Slices ![m] S1) (hpos : ∀ a, (![0] : Fin 1 → Nat) a < S1.size a) :
    extractAt ![0] (extractStridedSlice S1 ![m] (shapeCast S16
        ((sRv : Memref sig .scVector .vmem S2048 .i32).view.readAt (Elt F) (Rect.unit (s := S2048) off S16.size inb).toLoadRect g2) hc) hsl) hpos
      = g2 (ix1 (⟨off 0 + m, by have h := inb 0; change off 0 + 16 ≤ 2048 at h; omega⟩ : Fin 2048)) := by
  unfold extractAt extractStridedSlice shapeCast
  rw [Shape.reshapeEquiv_self, View.readAt_apply, View.read_apply, cast_eq]
  congr 1
  funext a; apply Fin.ext
  match a with
  | ⟨0, _⟩ => show off 0 + 1 * (m + 0) = off 0 + m; omega

/-- The column-offset word of row `n` of bag `g` of the block in half `h`: the word at `1024 h + 64 g + n`. -/
theorem rv_word (w b h g n : Nat) (hh : h < 2) (hg : g < 16) (hn : n < 64)
    (g2 : Buf (Elt F) ((sRv : Memref sig .scVector .vmem S2048 .i32).view.loc (thr d L)))
    (hV : RvV d L fl w b h g2) (p : Nat) (hp : p = 1024 * h + 64 * g + n) (hlt : p < 2048) :
    g2 (ix1 (⟨p, hlt⟩ : Fin 2048)) = Spec.tcol (blkWord fl w b (64 * g + n)) := by
  subst hp
  have := hV (64 * g + n) (by omega) hh
  rw [← this]
  congr 2
  exact Fin.ext (by show 1024 * h + 64 * g + n = 1024 * h + (64 * g + n); omega)

omit [Named F] d L in
/-- The accumulators start at zero. -/
theorem acc_zero (w b g i : Nat) :
    (broadcast S16 (FloatOps.ofBits (F := F) .f32 0#32) : FVec F S16 .f32) = AccMath.accVec (rowF fl tab w b g) (offF fl w b g) i 0 := rfl

omit [Named F] d L in
/-- The sixteen lanes a bag's sums are stored with, from accumulator `i` after the fifty rows. -/
theorem payload_ok (w b g : Nat) (i : Fin 4) (hc : S16.ShapeCasts S1x1x16) (x : S1x1x16.Idx) :
    shapeCast S1x1x16 (AccMath.accVec (rowF fl tab w b g) (offF fl w b g) i.val 50) hc x
      = Spec.bagPartial fl tab (128 * w + 16 * b + g) (16 * i.val + (x 2).val) 50 := by
  have h0 : (x 0).val = 0 := by have : (x 0).val < 1 := (x 0).isLt; omega
  have h1 : (x 1).val = 0 := by have : (x 1).val < 1 := (x 1).isLt; omega
  have h2 : (x 2).val < 16 := (x 2).isLt
  have hre : Shape.reshapeEquiv hc x = ix1 (⟨(x 2).val, h2⟩ : Fin 16) :=
    Shape.reshapeEquiv_eq_of_rowMajor hc (by
      rw [Shape.rowMajor_val_one, Shape.rowMajor_val_three, h0, h1]
      show (x 2).val = (0 * 1 + 0) * 16 + (x 2).val
      omega)
  unfold shapeCast
  rw [hre, acc_final]

/-- The four stores of a bag's sums, sixteen lanes each, add the bag's row to what a half of the write-back scratch is
    known to hold. -/
theorem WbK_bag (w b : Nat) (ib : Fin 2) (K : Fin 16 → Fin 64 → Prop)
    (wb : Buf (Elt F) ((sWb : Memref sig .scVector .vmem S2x16x64 .f32).view.loc (thr d L)))
    (hK : WbK d L fl tab w b ib K wb) (g : Fin 16)
    (o0 o1 o2 o3 : Fin 3 → Nat)
    (h0 : o0 = ![ib.val, g.val, 0]) (h1 : o1 = ![ib.val, g.val, 16]) (h2 : o2 = ![ib.val, g.val, 32]) (h3 : o3 = ![ib.val, g.val, 48])
    (i0 : ∀ a, o0 a + S1x1x16.size a ≤ S2x16x64.size a) (i1 : ∀ a, o1 a + S1x1x16.size a ≤ S2x16x64.size a)
    (i2 : ∀ a, o2 a + S1x1x16.size a ≤ S2x16x64.size a) (i3 : ∀ a, o3 a + S1x1x16.size a ≤ S2x16x64.size a)
    (P0 P1 P2 P3 : S1x1x16.Idx → Elt F .f32)
    (hP0 : ∀ x : S1x1x16.Idx, P0 x = Spec.bagPartial fl tab (128 * w + 16 * b + g.val) (16 * 0 + (x 2).val) 50)
    (hP1 : ∀ x : S1x1x16.Idx, P1 x = Spec.bagPartial fl tab (128 * w + 16 * b + g.val) (16 * 1 + (x 2).val) 50)
    (hP2 : ∀ x : S1x1x16.Idx, P2 x = Spec.bagPartial fl tab (128 * w + 16 * b + g.val) (16 * 2 + (x 2).val) 50)
    (hP3 : ∀ x : S1x1x16.Idx, P3 x = Spec.bagPartial fl tab (128 * w + 16 * b + g.val) (16 * 3 + (x 2).val) 50) :
    WbK d L fl tab w b ib (fun g' c' => K g' c' ∨ g' = g)
      (View.write (Elt F) ((sWb : Memref sig .scVector .vmem S2x16x64 .f32).view.slice (Rect.unit (s := S2x16x64) o3 S1x1x16.size i3))
        (View.write (Elt F) ((sWb : Memref sig .scVector .vmem S2x16x64 .f32).view.slice (Rect.unit (s := S2x16x64) o2 S1x1x16.size i2))
          (View.write (Elt F) ((sWb : Memref sig .scVector .vmem S2x16x64 .f32).view.slice (Rect.unit (s := S2x16x64) o1 S1x1x16.size i1))
            (View.write (Elt F) ((sWb : Memref sig .scVector .vmem S2x16x64 .f32).view.slice (Rect.unit (s := S2x16x64) o0 S1x1x16.size i0)) wb P0 Finset.univ)
            P1 Finset.univ) P2 Finset.univ) P3 Finset.univ) := by
  have k0 := WbK_write d L fl tab w b ib K wb hK g (0 : Fin 4) o0 h0 i0 P0 hP0
  have k1 := WbK_write d L fl tab w b ib _ _ k0 g (1 : Fin 4) o1 h1 i1 P1 hP1
  have k2 := WbK_write d L fl tab w b ib _ _ k1 g (2 : Fin 4) o2 h2 i2 P2 hP2
  have k3 := WbK_write d L fl tab w b ib _ _ k2 g (3 : Fin 4) o3 h3 i3 P3 hP3
  intro g' c' hk
  refine k3 g' c' ?_
  rcases hk with hk | rfl
  · exact .inl (.inl (.inl (.inl hk)))
  · have hc := c'.isLt
    by_cases c0 : c'.val < 16
    · exact .inl (.inl (.inl (.inr ⟨rfl, by show 16 * 0 ≤ c'.val; omega, by show c'.val < 16 * 0 + 16; omega⟩)))
    by_cases c1 : c'.val < 32
    · exact .inl (.inl (.inr ⟨rfl, by show 16 * 1 ≤ c'.val; omega, by show c'.val < 16 * 1 + 16; omega⟩))
    by_cases c2 : c'.val < 48
    · exact .inl (.inr ⟨rfl, by show 16 * 2 ≤ c'.val; omega, by show c'.val < 16 * 2 + 16; omega⟩)
    · exact .inr ⟨rfl, by show 16 * 3 ≤ c'.val; omega, by show c'.val < 16 * 3 + 16; omega⟩

end Tile

end Cert.Proof.Bag

end
-- ==== Proof.TilePair0.lean ====
/-
  One trip of an even block's pair loop on a vector subcore: from what holds before trip `k` to what holds before trip
  `k + 1`.

  The trip waits for the gather of bag `2 k` into slot 0, starts the gather of bag `2 k + 1` into slot 1, sums bag `2 k`'s fifty
  rows (three groups of sixteen and two more, each row read at its column offset in four sixteen-lane pieces) into the
  write-back scratch, waits for the second gather, starts the gather of bag `2 k + 2` into slot 0 — for the last trip, of the
  next block's first bag —, and sums bag `2 k + 1`. Each wait is admissible under what the subcore owes the launch; each
  gather's list lies in range by `TixB`; each extracted column offset passes the body's check by `RvB`.
-/
import proofs.«203835_g19404662243951_cont_8to1_399_35_alg».proof.Proof.TilePre
import proofs.«203835_g19404662243951_cont_8to1_399_35_alg».proof.Proof.Pay
import proofs.«203835_g19404662243951_cont_8to1_399_35_alg».proof.Proof.TileChk
import proofs.«203835_g19404662243951_cont_8to1_399_35_alg».proof.Proof.TileMath
import proofs.«203835_g19404662243951_cont_8to1_399_35_alg».proof.Proof.TileInv
import proofs.«203835_g19404662243951_cont_8to1_399_35_alg».proof.Proof.TilePairVal
import proofs.«203835_g19404662243951_cont_8to1_399_35_alg».proof.Proof.Gen.KernelIdeal.Skeleton
import Idealize.ShloMosaic.Lib.Tactic

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Lean Elab Tactic Meta in
/-- Reads the printed check at the head of the goal off its name and applies that check's lemma, leaving the word's fact. -/
elab "chk_disch" : tactic => withMainContext do
  let g ← getMainGoal
  let t ← instantiateMVars (← g.getType)
  let .const n _ := t.getAppFn | throwError "chk_disch: not a check"
  let .str _ last := n | throwError "chk_disch: not a check"
  unless last.startsWith "k1_chk" do throwError "chk_disch: not a check"
  let idx := last.drop 6
  let lem : Name := `Cert.Proof.TileChk ++ Name.mkSimple ("chk" ++ idx)
  evalTactic (← `(tactic| first | (refine $(mkIdent lem) ?_) | (refine $(mkIdent lem) _ ?_)))

variable {F : FTy → Type} [FloatOps F] [Named F]

local notation "𝕄" => MT nD τ sig (HIx 1) (Elt F) ℕ UU ℕ

section Tile

variable (d : Dev nD) (L : grid1.Coords)

set_option maxHeartbeats 0 in
theorem pair0_region (fl : IVec Spec.SFlat 32) (qt : PosShare TreeShare) (tab : FVec F Spec.STab .f32) (O : CellTallies nD τ sig (HIx 1))
    (W0 : Waits sig (HIx 1)) (v2 v3 : BitVec 32) (t1 : Fin k1_t1_loop.trips) (v1385 : BitVec 32) (k : Fin k1_t2_loop.trips) :
    inv0 d L fl qt tab O W0 (2 * t1.val) k.val ⟨⟩
      ⊢ wp frame (wpE (defs₀ (F := F)) 𝒱₀ (thr d L) none) Set.univ
          (k1_t2_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10 v2 v3 0#32 1#32 t1 v1385 k ⟨⟩)
          (inv0 d L fl qt tab O W0 (2 * t1.val) (k.val + 1)) := by
  unfold k1_t2_body
  unfold inv0
  iintro ⟨#Hmw', %r, %g1, %g2, %wb, %o, %ho, ⟨%hT, %hR, %ho_eq, %hV⟩, Hg0, H1, Ht, H3, H2, H4, Hg1, %W', %hW', HO⟩
  have hin := hin_of d L g1 hT
  by_cases hk : k.val < 7
  · have h4 := cond4_lt k hk
    have h5 := cond5_lt t1 k hk
    sl_exec_parts (disch := first | decide | (chk_disch; exact hR _))
    sl_unroll
    sl_exec_parts (disch := first | decide | (chk_disch; exact hR _))
    sl_unroll
    sl_exec_parts (disch := first | decide | (chk_disch; exact hR _))
    sl_step
    have hmin : min (128 * (k.val + 1)) 1024 = 128 * k.val + 128 := by omega
    have hoff : k1_off33 k = lo (k.val + 1) := by rw [k1_off33_eq]; unfold lo; rw [hmin]
    isplitl []; · iexact Hmw'
    iexists _; iexists g1; iexists g2; iexists _; iexists (k1_off33 k); iexists (k1_off33_inb k h4)
    isplitr; rotate_left
    · isplitl [Hg0]; · iexact Hg0
      isplitl [H1]; · iexact H1
      isplitl [Ht]; · iexact Ht
      isplitl [H3]; · iexact H3
      isplitl [H2]; · iexact H2
      isplitl [H4]; · iexact H4
      isplitl [Hg1]; · iexact Hg1
      iexists (insert (SemLoc.dma cc1_scratch6.sem, (default : HIx 1)) (insert (SemLoc.dma cc1_scratch5.sem, (default : HIx 1)) W')); isplitr
      · ipureintro; intro p hp
        rcases Finset.mem_insert.mp hp with rfl | hp
        · exact .inr rfl
        rcases Finset.mem_insert.mp hp with rfl | hp
        · exact .inr rfl
        · exact hW' p hp
      · iexact HO
    · ipureintro
      refine ⟨hT, hR, hoff, ?_⟩
      obtain ⟨hT0, hV0, hT1, hV1, hRows, hWb⟩ := hV
      have hk8 : k.val < 8 := lt_of_lt_of_eq k.isLt (by decide)
      have hRA : RowsV d L fl tab (wL L).val (2 * t1.val) (2 * k.val) 0 (View.write (Elt F) (h1M).view r (pair0_region.sl.gather0 d L tab k g1 hin) Finset.univ) :=
        RowsV_keep0 d L fl tab (wL L).val (2 * t1.val) (2 * k.val) r _ hRows
      have hRB0 : RowsV d L fl tab (wL L).val (2 * t1.val) (2 * k.val + 1) 1 (View.write (Elt F) (h1M).view r (pair0_region.sl.gather0 d L tab k g1 hin) Finset.univ) :=
        RowsV_landing1 d L fl tab _ (wL L).val (2 * t1.val) (2 * k.val + 1) g1 (k1_off7 k) _
          (words_of_TixV d L fl (wL L).val (2 * t1.val) 0 (2 * k.val + 1) (by decide) (by omega) g1 hT0 (k1_off7 k) (by rw [k1_off7_eq]; show 128 * k.val + 64 = 1024 * 0 + 64 * (2 * k.val + 1); omega)) _ r
      have hRB : RowsV d L fl tab (wL L).val (2 * t1.val) (2 * k.val + 1) 1 (View.write (Elt F) (h0M).view (View.write (Elt F) (h1M).view r (pair0_region.sl.gather0 d L tab k g1 hin) Finset.univ) (pair0_region.sl.gather212 d L tab k g1 hin h4) Finset.univ) :=
        RowsV_keep1 d L fl tab (wL L).val (2 * t1.val) (2 * k.val + 1) _ _ hRB0
      have hwA_0 : pair0_region.sl.v1667 d L k g2 = Spec.tcol (blkWord fl (wL L).val (2 * t1.val) (64 * (2 * k.val) + 0)) :=
        (rv_extract d L g2 _ _ _ 0 (by decide) _ _).trans (rv_word d L fl (wL L).val (2 * t1.val) 0 (2 * k.val) 0 (by decide) (by omega) (by decide) g2 hV0 _
          (by rw [k1_off8_eq k ⟨0, by decide⟩]; show 128 * k.val + 16 * 0 + 0 = 1024 * 0 + 64 * (2 * k.val) + 0; omega) _)
      have hwA_1 : pair0_region.sl.v1703 d L k g2 = Spec.tcol (blkWord fl (wL L).val (2 * t1.val) (64 * (2 * k.val) + 1)) :=
        (rv_extract d L g2 _ _ _ 1 (by decide) _ _).trans (rv_word d L fl (wL L).val (2 * t1.val) 0 (2 * k.val) 1 (by decide) (by omega) (by decide) g2 hV0 _
          (by rw [k1_off8_eq k ⟨0, by decide⟩]; show 128 * k.val + 16 * 0 + 1 = 1024 * 0 + 64 * (2 * k.val) + 1; omega) _)
      have hwA_2 : pair0_region.sl.v1739 d L k g2 = Spec.tcol (blkWord fl (wL L).val (2 * t1.val) (64 * (2 * k.val) + 2)) :=
        (rv_extract d L g2 _ _ _ 2 (by decide) _ _).trans (rv_word d L fl (wL L).val (2 * t1.val) 0 (2 * k.val) 2 (by decide) (by omega) (by decide) g2 hV0 _
          (by rw [k1_off8_eq k ⟨0, by decide⟩]; show 128 * k.val + 16 * 0 + 2 = 1024 * 0 + 64 * (2 * k.val) + 2; omega) _)
      have hwA_3 : pair0_region.sl.v1775 d L k g2 = Spec.tcol (blkWord fl (wL L).val (2 * t1.val) (64 * (2 * k.val) + 3)) :=
        (rv_extract d L g2 _ _ _ 3 (by decide) _ _).trans (rv_word d L fl (wL L).val (2 * t1.val) 0 (2 * k.val) 3 (by decide) (by omega) (by decide) g2 hV0 _
          (by rw [k1_off8_eq k ⟨0, by decide⟩]; show 128 * k.val + 16 * 0 + 3 = 1024 * 0 + 64 * (2 * k.val) + 3; omega) _)
      have hwA_4 : pair0_region.sl.v1811 d L k g2 = Spec.tcol (blkWord fl (wL L).val (2 * t1.val) (64 * (2 * k.val) + 4)) :=
        (rv_extract d L g2 _ _ _ 4 (by decide) _ _).trans (rv_word d L fl (wL L).val (2 * t1.val) 0 (2 * k.val) 4 (by decide) (by omega) (by decide) g2 hV0 _
          (by rw [k1_off8_eq k ⟨0, by decide⟩]; show 128 * k.val + 16 * 0 + 4 = 1024 * 0 + 64 * (2 * k.val) + 4; omega) _)
      have hwA_5 : pair0_region.sl.v1847 d L k g2 = Spec.tcol (blkWord fl (wL L).val (2 * t1.val) (64 * (2 * k.val) + 5)) :=
        (rv_extract d L g2 _ _ _ 5 (by decide) _ _).trans (rv_word d L fl (wL L).val (2 * t1.val) 0 (2 * k.val) 5 (by decide) (by omega) (by decide) g2 hV0 _
          (by rw [k1_off8_eq k ⟨0, by decide⟩]; show 128 * k.val + 16 * 0 + 5 = 1024 * 0 + 64 * (2 * k.val) + 5; omega) _)
      have hwA_6 : pair0_region.sl.v1883 d L k g2 = Spec.tcol (blkWord fl (wL L).val (2 * t1.val) (64 * (2 * k.val) + 6)) :=
        (rv_extract d L g2 _ _ _ 6 (by decide) _ _).trans (rv_word d L fl (wL L).val (2 * t1.val) 0 (2 * k.val) 6 (by decide) (by omega) (by decide) g2 hV0 _
          (by rw [k1_off8_eq k ⟨0, by decide⟩]; show 128 * k.val + 16 * 0 + 6 = 1024 * 0 + 64 * (2 * k.val) + 6; omega) _)
      have hwA_7 : pair0_region.sl.v1919 d L k g2 = Spec.tcol (blkWord fl (wL L).val (2 * t1.val) (64 * (2 * k.val) + 7)) :=
        (rv_extract d L g2 _ _ _ 7 (by decide) _ _).trans (rv_word d L fl (wL L).val (2 * t1.val) 0 (2 * k.val) 7 (by decide) (by omega) (by decide) g2 hV0 _
          (by rw [k1_off8_eq k ⟨0, by decide⟩]; show 128 * k.val + 16 * 0 + 7 = 1024 * 0 + 64 * (2 * k.val) + 7; omega) _)
      have hwA_8 : pair0_region.sl.v1955 d L k g2 = Spec.tcol (blkWord fl (wL L).val (2 * t1.val) (64 * (2 * k.val) + 8)) :=
        (rv_extract d L g2 _ _ _ 8 (by decide) _ _).trans (rv_word d L fl (wL L).val (2 * t1.val) 0 (2 * k.val) 8 (by decide) (by omega) (by decide) g2 hV0 _
          (by rw [k1_off8_eq k ⟨0, by decide⟩]; show 128 * k.val + 16 * 0 + 8 = 1024 * 0 + 64 * (2 * k.val) + 8; omega) _)
      have hwA_9 : pair0_region.sl.v1991 d L k g2 = Spec.tcol (blkWord fl (wL L).val (2 * t1.val) (64 * (2 * k.val) + 9)) :=
        (rv_extract d L g2 _ _ _ 9 (by decide) _ _).trans (rv_word d L fl (wL L).val (2 * t1.val) 0 (2 * k.val) 9 (by decide) (by omega) (by decide) g2 hV0 _
          (by rw [k1_off8_eq k ⟨0, by decide⟩]; show 128 * k.val + 16 * 0 + 9 = 1024 * 0 + 64 * (2 * k.val) + 9; omega) _)
      have hwA_10 : pair0_region.sl.v2027 d L k g2 = Spec.tcol (blkWord fl (wL L).val (2 * t1.val) (64 * (2 * k.val) + 10)) :=
        (rv_extract d L g2 _ _ _ 10 (by decide) _ _).trans (rv_word d L fl (wL L).val (2 * t1.val) 0 (2 * k.val) 10 (by decide) (by omega) (by decide) g2 hV0 _
          (by rw [k1_off8_eq k ⟨0, by decide⟩]; show 128 * k.val + 16 * 0 + 10 = 1024 * 0 + 64 * (2 * k.val) + 10; omega) _)
      have hwA_11 : pair0_region.sl.v2063 d L k g2 = Spec.tcol (blkWord fl (wL L).val (2 * t1.val) (64 * (2 * k.val) + 11)) :=
        (rv_extract d L g2 _ _ _ 11 (by decide) _ _).trans (rv_word d L fl (wL L).val (2 * t1.val) 0 (2 * k.val) 11 (by decide) (by omega) (by decide) g2 hV0 _
          (by rw [k1_off8_eq k ⟨0, by decide⟩]; show 128 * k.val + 16 * 0 + 11 = 1024 * 0 + 64 * (2 * k.val) + 11; omega) _)
      have hwA_12 : pair0_region.sl.v2099 d L k g2 = Spec.tcol (blkWord fl (wL L).val (2 * t1.val) (64 * (2 * k.val) + 12)) :=
        (rv_extract d L g2 _ _ _ 12 (by decide) _ _).trans (rv_word d L fl (wL L).val (2 * t1.val) 0 (2 * k.val) 12 (by decide) (by omega) (by decide) g2 hV0 _
          (by rw [k1_off8_eq k ⟨0, by decide⟩]; show 128 * k.val + 16 * 0 + 12 = 1024 * 0 + 64 * (2 * k.val) + 12; omega) _)
      have hwA_13 : pair0_region.sl.v2135 d L k g2 = Spec.tcol (blkWord fl (wL L).val (2 * t1.val) (64 * (2 * k.val) + 13)) :=
        (rv_extract d L g2 _ _ _ 13 (by decide) _ _).trans (rv_word d L fl (wL L).val (2 * t1.val) 0 (2 * k.val) 13 (by decide) (by omega) (by decide) g2 hV0 _
          (by rw [k1_off8_eq k ⟨0, by decide⟩]; show 128 * k.val + 16 * 0 + 13 = 1024 * 0 + 64 * (2 * k.val) + 13; omega) _)
      have hwA_14 : pair0_region.sl.v2171 d L k g2 = Spec.tcol (blkWord fl (wL L).val (2 * t1.val) (64 * (2 * k.val) + 14)) :=
        (rv_extract d L g2 _ _ _ 14 (by decide) _ _).trans (rv_word d L fl (wL L).val (2 * t1.val) 0 (2 * k.val) 14 (by decide) (by omega) (by decide) g2 hV0 _
          (by rw [k1_off8_eq k ⟨0, by decide⟩]; show 128 * k.val + 16 * 0 + 14 = 1024 * 0 + 64 * (2 * k.val) + 14; omega) _)
      have hwA_15 : pair0_region.sl.v2207 d L k g2 = Spec.tcol (blkWord fl (wL L).val (2 * t1.val) (64 * (2 * k.val) + 15)) :=
        (rv_extract d L g2 _ _ _ 15 (by decide) _ _).trans (rv_word d L fl (wL L).val (2 * t1.val) 0 (2 * k.val) 15 (by decide) (by omega) (by decide) g2 hV0 _
          (by rw [k1_off8_eq k ⟨0, by decide⟩]; show 128 * k.val + 16 * 0 + 15 = 1024 * 0 + 64 * (2 * k.val) + 15; omega) _)
      have hwA_16 : pair0_region.sl.v1667_1 d L k g2 = Spec.tcol (blkWord fl (wL L).val (2 * t1.val) (64 * (2 * k.val) + 16)) :=
        (rv_extract d L g2 _ _ _ 0 (by decide) _ _).trans (rv_word d L fl (wL L).val (2 * t1.val) 0 (2 * k.val) 16 (by decide) (by omega) (by decide) g2 hV0 _
          (by rw [k1_off8_eq k ⟨1, by decide⟩]; show 128 * k.val + 16 * 1 + 0 = 1024 * 0 + 64 * (2 * k.val) + 16; omega) _)
      have hwA_17 : pair0_region.sl.v1703_1 d L k g2 = Spec.tcol (blkWord fl (wL L).val (2 * t1.val) (64 * (2 * k.val) + 17)) :=
        (rv_extract d L g2 _ _ _ 1 (by decide) _ _).trans (rv_word d L fl (wL L).val (2 * t1.val) 0 (2 * k.val) 17 (by decide) (by omega) (by decide) g2 hV0 _
          (by rw [k1_off8_eq k ⟨1, by decide⟩]; show 128 * k.val + 16 * 1 + 1 = 1024 * 0 + 64 * (2 * k.val) + 17; omega) _)
      have hwA_18 : pair0_region.sl.v1739_1 d L k g2 = Spec.tcol (blkWord fl (wL L).val (2 * t1.val) (64 * (2 * k.val) + 18)) :=
        (rv_extract d L g2 _ _ _ 2 (by decide) _ _).trans (rv_word d L fl (wL L).val (2 * t1.val) 0 (2 * k.val) 18 (by decide) (by omega) (by decide) g2 hV0 _
          (by rw [k1_off8_eq k ⟨1, by decide⟩]; show 128 * k.val + 16 * 1 + 2 = 1024 * 0 + 64 * (2 * k.val) + 18; omega) _)
      have hwA_19 : pair0_region.sl.v1775_1 d L k g2 = Spec.tcol (blkWord fl (wL L).val (2 * t1.val) (64 * (2 * k.val) + 19)) :=
        (rv_extract d L g2 _ _ _ 3 (by decide) _ _).trans (rv_word d L fl (wL L).val (2 * t1.val) 0 (2 * k.val) 19 (by decide) (by omega) (by decide) g2 hV0 _
          (by rw [k1_off8_eq k ⟨1, by decide⟩]; show 128 * k.val + 16 * 1 + 3 = 1024 * 0 + 64 * (2 * k.val) + 19; omega) _)
      have hwA_20 : pair0_region.sl.v1811_1 d L k g2 = Spec.tcol (blkWord fl (wL L).val (2 * t1.val) (64 * (2 * k.val) + 20)) :=
        (rv_extract d L g2 _ _ _ 4 (by decide) _ _).trans (rv_word d L fl (wL L).val (2 * t1.val) 0 (2 * k.val) 20 (by decide) (by omega) (by decide) g2 hV0 _
          (by rw [k1_off8_eq k ⟨1, by decide⟩]; show 128 * k.val + 16 * 1 + 4 = 1024 * 0 + 64 * (2 * k.val) + 20; omega) _)
      have hwA_21 : pair0_region.sl.v1847_1 d L k g2 = Spec.tcol (blkWord fl (wL L).val (2 * t1.val) (64 * (2 * k.val) + 21)) :=
        (rv_extract d L g2 _ _ _ 5 (by decide) _ _).trans (rv_word d L fl (wL L).val (2 * t1.val) 0 (2 * k.val) 21 (by decide) (by omega) (by decide) g2 hV0 _
          (by rw [k1_off8_eq k ⟨1, by decide⟩]; show 128 * k.val + 16 * 1 + 5 = 1024 * 0 + 64 * (2 * k.val) + 21; omega) _)
      have hwA_22 : pair0_region.sl.v1883_1 d L k g2 = Spec.tcol (blkWord fl (wL L).val (2 * t1.val) (64 * (2 * k.val) + 22)) :=
        (rv_extract d L g2 _ _ _ 6 (by decide) _ _).trans (rv_word d L fl (wL L).val (2 * t1.val) 0 (2 * k.val) 22 (by decide) (by omega) (by decide) g2 hV0 _
          (by rw [k1_off8_eq k ⟨1, by decide⟩]; show 128 * k.val + 16 * 1 + 6 = 1024 * 0 + 64 * (2 * k.val) + 22; omega) _)
      have hwA_23 : pair0_region.sl.v1919_1 d L k g2 = Spec.tcol (blkWord fl (wL L).val (2 * t1.val) (64 * (2 * k.val) + 23)) :=
        (rv_extract d L g2 _ _ _ 7 (by decide) _ _).trans (rv_word d L fl (wL L).val (2 * t1.val) 0 (2 * k.val) 23 (by decide) (by omega) (by decide) g2 hV0 _
          (by rw [k1_off8_eq k ⟨1, by decide⟩]; show 128 * k.val + 16 * 1 + 7 = 1024 * 0 + 64 * (2 * k.val) + 23; omega) _)
      have hwA_24 : pair0_region.sl.v1955_1 d L k g2 = Spec.tcol (blkWord fl (wL L).val (2 * t1.val) (64 * (2 * k.val) + 24)) :=
        (rv_extract d L g2 _ _ _ 8 (by decide) _ _).trans (rv_word d L fl (wL L).val (2 * t1.val) 0 (2 * k.val) 24 (by decide) (by omega) (by decide) g2 hV0 _
          (by rw [k1_off8_eq k ⟨1, by decide⟩]; show 128 * k.val + 16 * 1 + 8 = 1024 * 0 + 64 * (2 * k.val) + 24; omega) _)
      have hwA_25 : pair0_region.sl.v1991_1 d L k g2 = Spec.tcol (blkWord fl (wL L).val (2 * t1.val) (64 * (2 * k.val) + 25)) :=
        (rv_extract d L g2 _ _ _ 9 (by decide) _ _).trans (rv_word d L fl (wL L).val (2 * t1.val) 0 (2 * k.val) 25 (by decide) (by omega) (by decide) g2 hV0 _
          (by rw [k1_off8_eq k ⟨1, by decide⟩]; show 128 * k.val + 16 * 1 + 9 = 1024 * 0 + 64 * (2 * k.val) + 25; omega) _)
      have hwA_26 : pair0_region.sl.v2027_1 d L k g2 = Spec.tcol (blkWord fl (wL L).val (2 * t1.val) (64 * (2 * k.val) + 26)) :=
        (rv_extract d L g2 _ _ _ 10 (by decide) _ _).trans (rv_word d L fl (wL L).val (2 * t1.val) 0 (2 * k.val) 26 (by decide) (by omega) (by decide) g2 hV0 _
          (by rw [k1_off8_eq k ⟨1, by decide⟩]; show 128 * k.val + 16 * 1 + 10 = 1024 * 0 + 64 * (2 * k.val) + 26; omega) _)
      have hwA_27 : pair0_region.sl.v2063_1 d L k g2 = Spec.tcol (blkWord fl (wL L).val (2 * t1.val) (64 * (2 * k.val) + 27)) :=
        (rv_extract d L g2 _ _ _ 11 (by decide) _ _).trans (rv_word d L fl (wL L).val (2 * t1.val) 0 (2 * k.val) 27 (by decide) (by omega) (by decide) g2 hV0 _
          (by rw [k1_off8_eq k ⟨1, by decide⟩]; show 128 * k.val + 16 * 1 + 11 = 1024 * 0 + 64 * (2 * k.val) + 27; omega) _)
      have hwA_28 : pair0_region.sl.v2099_1 d L k g2 = Spec.tcol (blkWord fl (wL L).val (2 * t1.val) (64 * (2 * k.val) + 28)) :=
        (rv_extract d L g2 _ _ _ 12 (by decide) _ _).trans (rv_word d L fl (wL L).val (2 * t1.val) 0 (2 * k.val) 28 (by decide) (by omega) (by decide) g2 hV0 _
          (by rw [k1_off8_eq k ⟨1, by decide⟩]; show 128 * k.val + 16 * 1 + 12 = 1024 * 0 + 64 * (2 * k.val) + 28; omega) _)
      have hwA_29 : pair0_region.sl.v2135_1 d L k g2 = Spec.tcol (blkWord fl (wL L).val (2 * t1.val) (64 * (2 * k.val) + 29)) :=
        (rv_extract d L g2 _ _ _ 13 (by decide) _ _).trans (rv_word d L fl (wL L).val (2 * t1.val) 0 (2 * k.val) 29 (by decide) (by omega) (by decide) g2 hV0 _
          (by rw [k1_off8_eq k ⟨1, by decide⟩]; show 128 * k.val + 16 * 1 + 13 = 1024 * 0 + 64 * (2 * k.val) + 29; omega) _)
      have hwA_30 : pair0_region.sl.v2171_1 d L k g2 = Spec.tcol (blkWord fl (wL L).val (2 * t1.val) (64 * (2 * k.val) + 30)) :=
        (rv_extract d L g2 _ _ _ 14 (by decide) _ _).trans (rv_word d L fl (wL L).val (2 * t1.val) 0 (2 * k.val) 30 (by decide) (by omega) (by decide) g2 hV0 _
          (by rw [k1_off8_eq k ⟨1, by decide⟩]; show 128 * k.val + 16 * 1 + 14 = 1024 * 0 + 64 * (2 * k.val) + 30; omega) _)
      have hwA_31 : pair0_region.sl.v2207_1 d L k g2 = Spec.tcol (blkWord fl (wL L).val (2 * t1.val) (64 * (2 * k.val) + 31)) :=
        (rv_extract d L g2 _ _ _ 15 (by decide) _ _).trans (rv_word d L fl (wL L).val (2 * t1.val) 0 (2 * k.val) 31 (by decide) (by omega) (by decide) g2 hV0 _
          (by rw [k1_off8_eq k ⟨1, by decide⟩]; show 128 * k.val + 16 * 1 + 15 = 1024 * 0 + 64 * (2 * k.val) + 31; omega) _)
      have hwA_32 : pair0_region.sl.v1667_2 d L k g2 = Spec.tcol (blkWord fl (wL L).val (2 * t1.val) (64 * (2 * k.val) + 32)) :=
        (rv_extract d L g2 _ _ _ 0 (by decide) _ _).trans (rv_word d L fl (wL L).val (2 * t1.val) 0 (2 * k.val) 32 (by decide) (by omega) (by decide) g2 hV0 _
          (by rw [k1_off8_eq k ⟨2, by decide⟩]; show 128 * k.val + 16 * 2 + 0 = 1024 * 0 + 64 * (2 * k.val) + 32; omega) _)
      have hwA_33 : pair0_region.sl.v1703_2 d L k g2 = Spec.tcol (blkWord fl (wL L).val (2 * t1.val) (64 * (2 * k.val) + 33)) :=
        (rv_extract d L g2 _ _ _ 1 (by decide) _ _).trans (rv_word d L fl (wL L).val (2 * t1.val) 0 (2 * k.val) 33 (by decide) (by omega) (by decide) g2 hV0 _
          (by rw [k1_off8_eq k ⟨2, by decide⟩]; show 128 * k.val + 16 * 2 + 1 = 1024 * 0 + 64 * (2 * k.val) + 33; omega) _)
      have hwA_34 : pair0_region.sl.v1739_2 d L k g2 = Spec.tcol (blkWord fl (wL L).val (2 * t1.val) (64 * (2 * k.val) + 34)) :=
        (rv_extract d L g2 _ _ _ 2 (by decide) _ _).trans (rv_word d L fl (wL L).val (2 * t1.val) 0 (2 * k.val) 34 (by decide) (by omega) (by decide) g2 hV0 _
          (by rw [k1_off8_eq k ⟨2, by decide⟩]; show 128 * k.val + 16 * 2 + 2 = 1024 * 0 + 64 * (2 * k.val) + 34; omega) _)
      have hwA_35 : pair0_region.sl.v1775_2 d L k g2 = Spec.tcol (blkWord fl (wL L).val (2 * t1.val) (64 * (2 * k.val) + 35)) :=
        (rv_extract d L g2 _ _ _ 3 (by decide) _ _).trans (rv_word d L fl (wL L).val (2 * t1.val) 0 (2 * k.val) 35 (by decide) (by omega) (by decide) g2 hV0 _
          (by rw [k1_off8_eq k ⟨2, by decide⟩]; show 128 * k.val + 16 * 2 + 3 = 1024 * 0 + 64 * (2 * k.val) + 35; omega) _)
      have hwA_36 : pair0_region.sl.v1811_2 d L k g2 = Spec.tcol (blkWord fl (wL L).val (2 * t1.val) (64 * (2 * k.val) + 36)) :=
        (rv_extract d L g2 _ _ _ 4 (by decide) _ _).trans (rv_word d L fl (wL L).val (2 * t1.val) 0 (2 * k.val) 36 (by decide) (by omega) (by decide) g2 hV0 _
          (by rw [k1_off8_eq k ⟨2, by decide⟩]; show 128 * k.val + 16 * 2 + 4 = 1024 * 0 + 64 * (2 * k.val) + 36; omega) _)
      have hwA_37 : pair0_region.sl.v1847_2 d L k g2 = Spec.tcol (blkWord fl (wL L).val (2 * t1.val) (64 * (2 * k.val) + 37)) :=
        (rv_extract d L g2 _ _ _ 5 (by decide) _ _).trans (rv_word d L fl (wL L).val (2 * t1.val) 0 (2 * k.val) 37 (by decide) (by omega) (by decide) g2 hV0 _
          (by rw [k1_off8_eq k ⟨2, by decide⟩]; show 128 * k.val + 16 * 2 + 5 = 1024 * 0 + 64 * (2 * k.val) + 37; omega) _)
      have hwA_38 : pair0_region.sl.v1883_2 d L k g2 = Spec.tcol (blkWord fl (wL L).val (2 * t1.val) (64 * (2 * k.val) + 38)) :=
        (rv_extract d L g2 _ _ _ 6 (by decide) _ _).trans (rv_word d L fl (wL L).val (2 * t1.val) 0 (2 * k.val) 38 (by decide) (by omega) (by decide) g2 hV0 _
          (by rw [k1_off8_eq k ⟨2, by decide⟩]; show 128 * k.val + 16 * 2 + 6 = 1024 * 0 + 64 * (2 * k.val) + 38; omega) _)
      have hwA_39 : pair0_region.sl.v1919_2 d L k g2 = Spec.tcol (blkWord fl (wL L).val (2 * t1.val) (64 * (2 * k.val) + 39)) :=
        (rv_extract d L g2 _ _ _ 7 (by decide) _ _).trans (rv_word d L fl (wL L).val (2 * t1.val) 0 (2 * k.val) 39 (by decide) (by omega) (by decide) g2 hV0 _
          (by rw [k1_off8_eq k ⟨2, by decide⟩]; show 128 * k.val + 16 * 2 + 7 = 1024 * 0 + 64 * (2 * k.val) + 39; omega) _)
      have hwA_40 : pair0_region.sl.v1955_2 d L k g2 = Spec.tcol (blkWord fl (wL L).val (2 * t1.val) (64 * (2 * k.val) + 40)) :=
        (rv_extract d L g2 _ _ _ 8 (by decide) _ _).trans (rv_word d L fl (wL L).val (2 * t1.val) 0 (2 * k.val) 40 (by decide) (by omega) (by decide) g2 hV0 _
          (by rw [k1_off8_eq k ⟨2, by decide⟩]; show 128 * k.val + 16 * 2 + 8 = 1024 * 0 + 64 * (2 * k.val) + 40; omega) _)
      have hwA_41 : pair0_region.sl.v1991_2 d L k g2 = Spec.tcol (blkWord fl (wL L).val (2 * t1.val) (64 * (2 * k.val) + 41)) :=
        (rv_extract d L g2 _ _ _ 9 (by decide) _ _).trans (rv_word d L fl (wL L).val (2 * t1.val) 0 (2 * k.val) 41 (by decide) (by omega) (by decide) g2 hV0 _
          (by rw [k1_off8_eq k ⟨2, by decide⟩]; show 128 * k.val + 16 * 2 + 9 = 1024 * 0 + 64 * (2 * k.val) + 41; omega) _)
      have hwA_42 : pair0_region.sl.v2027_2 d L k g2 = Spec.tcol (blkWord fl (wL L).val (2 * t1.val) (64 * (2 * k.val) + 42)) :=
        (rv_extract d L g2 _ _ _ 10 (by decide) _ _).trans (rv_word d L fl (wL L).val (2 * t1.val) 0 (2 * k.val) 42 (by decide) (by omega) (by decide) g2 hV0 _
          (by rw [k1_off8_eq k ⟨2, by decide⟩]; show 128 * k.val + 16 * 2 + 10 = 1024 * 0 + 64 * (2 * k.val) + 42; omega) _)
      have hwA_43 : pair0_region.sl.v2063_2 d L k g2 = Spec.tcol (blkWord fl (wL L).val (2 * t1.val) (64 * (2 * k.val) + 43)) :=
        (rv_extract d L g2 _ _ _ 11 (by decide) _ _).trans (rv_word d L fl (wL L).val (2 * t1.val) 0 (2 * k.val) 43 (by decide) (by omega) (by decide) g2 hV0 _
          (by rw [k1_off8_eq k ⟨2, by decide⟩]; show 128 * k.val + 16 * 2 + 11 = 1024 * 0 + 64 * (2 * k.val) + 43; omega) _)
      have hwA_44 : pair0_region.sl.v2099_2 d L k g2 = Spec.tcol (blkWord fl (wL L).val (2 * t1.val) (64 * (2 * k.val) + 44)) :=
        (rv_extract d L g2 _ _ _ 12 (by decide) _ _).trans (rv_word d L fl (wL L).val (2 * t1.val) 0 (2 * k.val) 44 (by decide) (by omega) (by decide) g2 hV0 _
          (by rw [k1_off8_eq k ⟨2, by decide⟩]; show 128 * k.val + 16 * 2 + 12 = 1024 * 0 + 64 * (2 * k.val) + 44; omega) _)
      have hwA_45 : pair0_region.sl.v2135_2 d L k g2 = Spec.tcol (blkWord fl (wL L).val (2 * t1.val) (64 * (2 * k.val) + 45)) :=
        (rv_extract d L g2 _ _ _ 13 (by decide) _ _).trans (rv_word d L fl (wL L).val (2 * t1.val) 0 (2 * k.val) 45 (by decide) (by omega) (by decide) g2 hV0 _
          (by rw [k1_off8_eq k ⟨2, by decide⟩]; show 128 * k.val + 16 * 2 + 13 = 1024 * 0 + 64 * (2 * k.val) + 45; omega) _)
      have hwA_46 : pair0_region.sl.v2171_2 d L k g2 = Spec.tcol (blkWord fl (wL L).val (2 * t1.val) (64 * (2 * k.val) + 46)) :=
        (rv_extract d L g2 _ _ _ 14 (by decide) _ _).trans (rv_word d L fl (wL L).val (2 * t1.val) 0 (2 * k.val) 46 (by decide) (by omega) (by decide) g2 hV0 _
          (by rw [k1_off8_eq k ⟨2, by decide⟩]; show 128 * k.val + 16 * 2 + 14 = 1024 * 0 + 64 * (2 * k.val) + 46; omega) _)
      have hwA_47 : pair0_region.sl.v2207_2 d L k g2 = Spec.tcol (blkWord fl (wL L).val (2 * t1.val) (64 * (2 * k.val) + 47)) :=
        (rv_extract d L g2 _ _ _ 15 (by decide) _ _).trans (rv_word d L fl (wL L).val (2 * t1.val) 0 (2 * k.val) 47 (by decide) (by omega) (by decide) g2 hV0 _
          (by rw [k1_off8_eq k ⟨2, by decide⟩]; show 128 * k.val + 16 * 2 + 15 = 1024 * 0 + 64 * (2 * k.val) + 47; omega) _)
      have hwA_48 : pair0_region.sl.v1456 d L k g2 = Spec.tcol (blkWord fl (wL L).val (2 * t1.val) (64 * (2 * k.val) + 48)) :=
        (rv_extract d L g2 _ _ _ 0 (by decide) _ _).trans (rv_word d L fl (wL L).val (2 * t1.val) 0 (2 * k.val) 48 (by decide) (by omega) (by decide) g2 hV0 _
          (by rw [k1_off25_eq k]; show 128 * k.val + 48 + 0 = 1024 * 0 + 64 * (2 * k.val) + 48; omega) _)
      have hwA_49 : pair0_region.sl.v1490 d L k g2 = Spec.tcol (blkWord fl (wL L).val (2 * t1.val) (64 * (2 * k.val) + 49)) :=
        (rv_extract d L g2 _ _ _ 1 (by decide) _ _).trans (rv_word d L fl (wL L).val (2 * t1.val) 0 (2 * k.val) 49 (by decide) (by omega) (by decide) g2 hV0 _
          (by rw [k1_off25_eq k]; show 128 * k.val + 48 + 1 = 1024 * 0 + 64 * (2 * k.val) + 49; omega) _)
      have aA0_0 : pair0_region.sl.v1445 = AccMath.accVec (rowF fl tab (wL L).val (2 * t1.val) (2 * k.val)) (offF fl (wL L).val (2 * t1.val) (2 * k.val)) 0 0 := acc_zero fl tab (wL L).val (2 * t1.val) (2 * k.val) 0
      have aA0_1 : pair0_region.sl.v1675 d L tab k r g1 g2 hR hin = AccMath.accVec (rowF fl tab (wL L).val (2 * t1.val) (2 * k.val)) (offF fl (wL L).val (2 * t1.val) (2 * k.val)) 0 1 := by
        unfold pair0_region.sl.v1675; rw [aA0_0]
        exact acc_step d L fl tab (wL L).val (2 * t1.val) (2 * k.val) 0 _ hRA ⟨0, by decide⟩ ⟨0, by decide⟩ 0#32 rfl _ hwA_0 _ (k1_off9_form ⟨0, by decide⟩ _ _) _ _
      have aA0_2 : pair0_region.sl.v1711 d L tab k r g1 g2 hR hin = AccMath.accVec (rowF fl tab (wL L).val (2 * t1.val) (2 * k.val)) (offF fl (wL L).val (2 * t1.val) (2 * k.val)) 0 2 := by
        unfold pair0_region.sl.v1711; rw [aA0_1]
        exact acc_step d L fl tab (wL L).val (2 * t1.val) (2 * k.val) 0 _ hRA ⟨1, by decide⟩ ⟨0, by decide⟩ 0#32 rfl _ hwA_1 _ (k1_off10_form ⟨0, by decide⟩ _ _) _ _
      have aA0_3 : pair0_region.sl.v1747 d L tab k r g1 g2 hR hin = AccMath.accVec (rowF fl tab (wL L).val (2 * t1.val) (2 * k.val)) (offF fl (wL L).val (2 * t1.val) (2 * k.val)) 0 3 := by
        unfold pair0_region.sl.v1747; rw [aA0_2]
        exact acc_step d L fl tab (wL L).val (2 * t1.val) (2 * k.val) 0 _ hRA ⟨2, by decide⟩ ⟨0, by decide⟩ 0#32 rfl _ hwA_2 _ (k1_off11_form ⟨0, by decide⟩ _ _) _ _
      have aA0_4 : pair0_region.sl.v1783 d L tab k r g1 g2 hR hin = AccMath.accVec (rowF fl tab (wL L).val (2 * t1.val) (2 * k.val)) (offF fl (wL L).val (2 * t1.val) (2 * k.val)) 0 4 := by
        unfold pair0_region.sl.v1783; rw [aA0_3]
        exact acc_step d L fl tab (wL L).val (2 * t1.val) (2 * k.val) 0 _ hRA ⟨3, by decide⟩ ⟨0, by decide⟩ 0#32 rfl _ hwA_3 _ (k1_off12_form ⟨0, by decide⟩ _ _) _ _
      have aA0_5 : pair0_region.sl.v1819 d L tab k r g1 g2 hR hin = AccMath.accVec (rowF fl tab (wL L).val (2 * t1.val) (2 * k.val)) (offF fl (wL L).val (2 * t1.val) (2 * k.val)) 0 5 := by
        unfold pair0_region.sl.v1819; rw [aA0_4]
        exact acc_step d L fl tab (wL L).val (2 * t1.val) (2 * k.val) 0 _ hRA ⟨4, by decide⟩ ⟨0, by decide⟩ 0#32 rfl _ hwA_4 _ (k1_off13_form ⟨0, by decide⟩ _ _) _ _
      have aA0_6 : pair0_region.sl.v1855 d L tab k r g1 g2 hR hin = AccMath.accVec (rowF fl tab (wL L).val (2 * t1.val) (2 * k.val)) (offF fl (wL L).val (2 * t1.val) (2 * k.val)) 0 6 := by
        unfold pair0_region.sl.v1855; rw [aA0_5]
        exact acc_step d L fl tab (wL L).val (2 * t1.val) (2 * k.val) 0 _ hRA ⟨5, by decide⟩ ⟨0, by decide⟩ 0#32 rfl _ hwA_5 _ (k1_off14_form ⟨0, by decide⟩ _ _) _ _
      have aA0_7 : pair0_region.sl.v1891 d L tab k r g1 g2 hR hin = AccMath.accVec (rowF fl tab (wL L).val (2 * t1.val) (2 * k.val)) (offF fl (wL L).val (2 * t1.val) (2 * k.val)) 0 7 := by
        unfold pair0_region.sl.v1891; rw [aA0_6]
        exact acc_step d L fl tab (wL L).val (2 * t1.val) (2 * k.val) 0 _ hRA ⟨6, by decide⟩ ⟨0, by decide⟩ 0#32 rfl _ hwA_6 _ (k1_off15_form ⟨0, by decide⟩ _ _) _ _
      have aA0_8 : pair0_region.sl.v1927 d L tab k r g1 g2 hR hin = AccMath.accVec (rowF fl tab (wL L).val (2 * t1.val) (2 * k.val)) (offF fl (wL L).val (2 * t1.val) (2 * k.val)) 0 8 := by
        unfold pair0_region.sl.v1927; rw [aA0_7]
        exact acc_step d L fl tab (wL L).val (2 * t1.val) (2 * k.val) 0 _ hRA ⟨7, by decide⟩ ⟨0, by decide⟩ 0#32 rfl _ hwA_7 _ (k1_off16_form ⟨0, by decide⟩ _ _) _ _
      have aA0_9 : pair0_region.sl.v1963 d L tab k r g1 g2 hR hin = AccMath.accVec (rowF fl tab (wL L).val (2 * t1.val) (2 * k.val)) (offF fl (wL L).val (2 * t1.val) (2 * k.val)) 0 9 := by
        unfold pair0_region.sl.v1963; rw [aA0_8]
        exact acc_step d L fl tab (wL L).val (2 * t1.val) (2 * k.val) 0 _ hRA ⟨8, by decide⟩ ⟨0, by decide⟩ 0#32 rfl _ hwA_8 _ (k1_off17_form ⟨0, by decide⟩ _ _) _ _
      have aA0_10 : pair0_region.sl.v1999 d L tab k r g1 g2 hR hin = AccMath.accVec (rowF fl tab (wL L).val (2 * t1.val) (2 * k.val)) (offF fl (wL L).val (2 * t1.val) (2 * k.val)) 0 10 := by
        unfold pair0_region.sl.v1999; rw [aA0_9]
        exact acc_step d L fl tab (wL L).val (2 * t1.val) (2 * k.val) 0 _ hRA ⟨9, by decide⟩ ⟨0, by decide⟩ 0#32 rfl _ hwA_9 _ (k1_off18_form ⟨0, by decide⟩ _ _) _ _
      have aA0_11 : pair0_region.sl.v2035 d L tab k r g1 g2 hR hin = AccMath.accVec (rowF fl tab (wL L).val (2 * t1.val) (2 * k.val)) (offF fl (wL L).val (2 * t1.val) (2 * k.val)) 0 11 := by
        unfold pair0_region.sl.v2035; rw [aA0_10]
        exact acc_step d L fl tab (wL L).val (2 * t1.val) (2 * k.val) 0 _ hRA ⟨10, by decide⟩ ⟨0, by decide⟩ 0#32 rfl _ hwA_10 _ (k1_off19_form ⟨0, by decide⟩ _ _) _ _
      have aA0_12 : pair0_region.sl.v2071 d L tab k r g1 g2 hR hin = AccMath.accVec (rowF fl tab (wL L).val (2 * t1.val) (2 * k.val)) (offF fl (wL L).val (2 * t1.val) (2 * k.val)) 0 12 := by
        unfold pair0_region.sl.v2071; rw [aA0_11]
        exact acc_step d L fl tab (wL L).val (2 * t1.val) (2 * k.val) 0 _ hRA ⟨11, by decide⟩ ⟨0, by decide⟩ 0#32 rfl _ hwA_11 _ (k1_off20_form ⟨0, by decide⟩ _ _) _ _
      have aA0_13 : pair0_region.sl.v2107 d L tab k r g1 g2 hR hin = AccMath.accVec (rowF fl tab (wL L).val (2 * t1.val) (2 * k.val)) (offF fl (wL L).val (2 * t1.val) (2 * k.val)) 0 13 := by
        unfold pair0_region.sl.v2107; rw [aA0_12]
        exact acc_step d L fl tab (wL L).val (2 * t1.val) (2 * k.val) 0 _ hRA ⟨12, by decide⟩ ⟨0, by decide⟩ 0#32 rfl _ hwA_12 _ (k1_off21_form ⟨0, by decide⟩ _ _) _ _
      have aA0_14 : pair0_region.sl.v2143 d L tab k r g1 g2 hR hin = AccMath.accVec (rowF fl tab (wL L).val (2 * t1.val) (2 * k.val)) (offF fl (wL L).val (2 * t1.val) (2 * k.val)) 0 14 := by
        unfold pair0_region.sl.v2143; rw [aA0_13]
        exact acc_step d L fl tab (wL L).val (2 * t1.val) (2 * k.val) 0 _ hRA ⟨13, by decide⟩ ⟨0, by decide⟩ 0#32 rfl _ hwA_13 _ (k1_off22_form ⟨0, by decide⟩ _ _) _ _
      have aA0_15 : pair0_region.sl.v2179 d L tab k r g1 g2 hR hin = AccMath.accVec (rowF fl tab (wL L).val (2 * t1.val) (2 * k.val)) (offF fl (wL L).val (2 * t1.val) (2 * k.val)) 0 15 := by
        unfold pair0_region.sl.v2179; rw [aA0_14]
        exact acc_step d L fl tab (wL L).val (2 * t1.val) (2 * k.val) 0 _ hRA ⟨14, by decide⟩ ⟨0, by decide⟩ 0#32 rfl _ hwA_14 _ (k1_off23_form ⟨0, by decide⟩ _ _) _ _
      have aA0_16 : pair0_region.sl.v2215 d L tab k r g1 g2 hR hin = AccMath.accVec (rowF fl tab (wL L).val (2 * t1.val) (2 * k.val)) (offF fl (wL L).val (2 * t1.val) (2 * k.val)) 0 16 := by
        unfold pair0_region.sl.v2215; rw [aA0_15]
        exact acc_step d L fl tab (wL L).val (2 * t1.val) (2 * k.val) 0 _ hRA ⟨15, by decide⟩ ⟨0, by decide⟩ 0#32 rfl _ hwA_15 _ (k1_off24_form ⟨0, by decide⟩ _ _) _ _
      have aA0_17 : pair0_region.sl.v1675_1 d L tab k r g1 g2 hR hin = AccMath.accVec (rowF fl tab (wL L).val (2 * t1.val) (2 * k.val)) (offF fl (wL L).val (2 * t1.val) (2 * k.val)) 0 17 := by
        unfold pair0_region.sl.v1675_1; rw [aA0_16]
        exact acc_step d L fl tab (wL L).val (2 * t1.val) (2 * k.val) 0 _ hRA ⟨16, by decide⟩ ⟨0, by decide⟩ 0#32 rfl _ hwA_16 _ (k1_off9_form ⟨1, by decide⟩ _ _) _ _
      have aA0_18 : pair0_region.sl.v1711_1 d L tab k r g1 g2 hR hin = AccMath.accVec (rowF fl tab (wL L).val (2 * t1.val) (2 * k.val)) (offF fl (wL L).val (2 * t1.val) (2 * k.val)) 0 18 := by
        unfold pair0_region.sl.v1711_1; rw [aA0_17]
        exact acc_step d L fl tab (wL L).val (2 * t1.val) (2 * k.val) 0 _ hRA ⟨17, by decide⟩ ⟨0, by decide⟩ 0#32 rfl _ hwA_17 _ (k1_off10_form ⟨1, by decide⟩ _ _) _ _
      have aA0_19 : pair0_region.sl.v1747_1 d L tab k r g1 g2 hR hin = AccMath.accVec (rowF fl tab (wL L).val (2 * t1.val) (2 * k.val)) (offF fl (wL L).val (2 * t1.val) (2 * k.val)) 0 19 := by
        unfold pair0_region.sl.v1747_1; rw [aA0_18]
        exact acc_step d L fl tab (wL L).val (2 * t1.val) (2 * k.val) 0 _ hRA ⟨18, by decide⟩ ⟨0, by decide⟩ 0#32 rfl _ hwA_18 _ (k1_off11_form ⟨1, by decide⟩ _ _) _ _
      have aA0_20 : pair0_region.sl.v1783_1 d L tab k r g1 g2 hR hin = AccMath.accVec (rowF fl tab (wL L).val (2 * t1.val) (2 * k.val)) (offF fl (wL L).val (2 * t1.val) (2 * k.val)) 0 20 := by
        unfold pair0_region.sl.v1783_1; rw [aA0_19]
        exact acc_step d L fl tab (wL L).val (2 * t1.val) (2 * k.val) 0 _ hRA ⟨19, by decide⟩ ⟨0, by decide⟩ 0#32 rfl _ hwA_19 _ (k1_off12_form ⟨1, by decide⟩ _ _) _ _
      have aA0_21 : pair0_region.sl.v1819_1 d L tab k r g1 g2 hR hin = AccMath.accVec (rowF fl tab (wL L).val (2 * t1.val) (2 * k.val)) (offF fl (wL L).val (2 * t1.val) (2 * k.val)) 0 21 := by
        unfold pair0_region.sl.v1819_1; rw [aA0_20]
        exact acc_step d L fl tab (wL L).val (2 * t1.val) (2 * k.val) 0 _ hRA ⟨20, by decide⟩ ⟨0, by decide⟩ 0#32 rfl _ hwA_20 _ (k1_off13_form ⟨1, by decide⟩ _ _) _ _
      have aA0_22 : pair0_region.sl.v1855_1 d L tab k r g1 g2 hR hin = AccMath.accVec (rowF fl tab (wL L).val (2 * t1.val) (2 * k.val)) (offF fl (wL L).val (2 * t1.val) (2 * k.val)) 0 22 := by
        unfold pair0_region.sl.v1855_1; rw [aA0_21]
        exact acc_step d L fl tab (wL L).val (2 * t1.val) (2 * k.val) 0 _ hRA ⟨21, by decide⟩ ⟨0, by decide⟩ 0#32 rfl _ hwA_21 _ (k1_off14_form ⟨1, by decide⟩ _ _) _ _
      have aA0_23 : pair0_region.sl.v1891_1 d L tab k r g1 g2 hR hin = AccMath.accVec (rowF fl tab (wL L).val (2 * t1.val) (2 * k.val)) (offF fl (wL L).val (2 * t1.val) (2 * k.val)) 0 23 := by
        unfold pair0_region.sl.v1891_1; rw [aA0_22]
        exact acc_step d L fl tab (wL L).val (2 * t1.val) (2 * k.val) 0 _ hRA ⟨22, by decide⟩ ⟨0, by decide⟩ 0#32 rfl _ hwA_22 _ (k1_off15_form ⟨1, by decide⟩ _ _) _ _
      have aA0_24 : pair0_region.sl.v1927_1 d L tab k r g1 g2 hR hin = AccMath.accVec (rowF fl tab (wL L).val (2 * t1.val) (2 * k.val)) (offF fl (wL L).val (2 * t1.val) (2 * k.val)) 0 24 := by
        unfold pair0_region.sl.v1927_1; rw [aA0_23]
        exact acc_step d L fl tab (wL L).val (2 * t1.val) (2 * k.val) 0 _ hRA ⟨23, by decide⟩ ⟨0, by decide⟩ 0#32 rfl _ hwA_23 _ (k1_off16_form ⟨1, by decide⟩ _ _) _ _
      have aA0_25 : pair0_region.sl.v1963_1 d L tab k r g1 g2 hR hin = AccMath.accVec (rowF fl tab (wL L).val (2 * t1.val) (2 * k.val)) (offF fl (wL L).val (2 * t1.val) (2 * k.val)) 0 25 := by
        unfold pair0_region.sl.v1963_1; rw [aA0_24]
        exact acc_step d L fl tab (wL L).val (2 * t1.val) (2 * k.val) 0 _ hRA ⟨24, by decide⟩ ⟨0, by decide⟩ 0#32 rfl _ hwA_24 _ (k1_off17_form ⟨1, by decide⟩ _ _) _ _
      have aA0_26 : pair0_region.sl.v1999_1 d L tab k r g1 g2 hR hin = AccMath.accVec (rowF fl tab (wL L).val (2 * t1.val) (2 * k.val)) (offF fl (wL L).val (2 * t1.val) (2 * k.val)) 0 26 := by
        unfold pair0_region.sl.v1999_1; rw [aA0_25]
        exact acc_step d L fl tab (wL L).val (2 * t1.val) (2 * k.val) 0 _ hRA ⟨25, by decide⟩ ⟨0, by decide⟩ 0#32 rfl _ hwA_25 _ (k1_off18_form ⟨1, by decide⟩ _ _) _ _
      have aA0_27 : pair0_region.sl.v2035_1 d L tab k r g1 g2 hR hin = AccMath.accVec (rowF fl tab (wL L).val (2 * t1.val) (2 * k.val)) (offF fl (wL L).val (2 * t1.val) (2 * k.val)) 0 27 := by
        unfold pair0_region.sl.v2035_1; rw [aA0_26]
        exact acc_step d L fl tab (wL L).val (2 * t1.val) (2 * k.val) 0 _ hRA ⟨26, by decide⟩ ⟨0, by decide⟩ 0#32 rfl _ hwA_26 _ (k1_off19_form ⟨1, by decide⟩ _ _) _ _
      have aA0_28 : pair0_region.sl.v2071_1 d L tab k r g1 g2 hR hin = AccMath.accVec (rowF fl tab (wL L).val (2 * t1.val) (2 * k.val)) (offF fl (wL L).val (2 * t1.val) (2 * k.val)) 0 28 := by
        unfold pair0_region.sl.v2071_1; rw [aA0_27]
        exact acc_step d L fl tab (wL L).val (2 * t1.val) (2 * k.val) 0 _ hRA ⟨27, by decide⟩ ⟨0, by decide⟩ 0#32 rfl _ hwA_27 _ (k1_off20_form ⟨1, by decide⟩ _ _) _ _
      have aA0_29 : pair0_region.sl.v2107_1 d L tab k r g1 g2 hR hin = AccMath.accVec (rowF fl tab (wL L).val (2 * t1.val) (2 * k.val)) (offF fl (wL L).val (2 * t1.val) (2 * k.val)) 0 29 := by
        unfold pair0_region.sl.v2107_1; rw [aA0_28]
        exact acc_step d L fl tab (wL L).val (2 * t1.val) (2 * k.val) 0 _ hRA ⟨28, by decide⟩ ⟨0, by decide⟩ 0#32 rfl _ hwA_28 _ (k1_off21_form ⟨1, by decide⟩ _ _) _ _
      have aA0_30 : pair0_region.sl.v2143_1 d L tab k r g1 g2 hR hin = AccMath.accVec (rowF fl tab (wL L).val (2 * t1.val) (2 * k.val)) (offF fl (wL L).val (2 * t1.val) (2 * k.val)) 0 30 := by
        unfold pair0_region.sl.v2143_1; rw [aA0_29]
        exact acc_step d L fl tab (wL L).val (2 * t1.val) (2 * k.val) 0 _ hRA ⟨29, by decide⟩ ⟨0, by decide⟩ 0#32 rfl _ hwA_29 _ (k1_off22_form ⟨1, by decide⟩ _ _) _ _
      have aA0_31 : pair0_region.sl.v2179_1 d L tab k r g1 g2 hR hin = AccMath.accVec (rowF fl tab (wL L).val (2 * t1.val) (2 * k.val)) (offF fl (wL L).val (2 * t1.val) (2 * k.val)) 0 31 := by
        unfold pair0_region.sl.v2179_1; rw [aA0_30]
        exact acc_step d L fl tab (wL L).val (2 * t1.val) (2 * k.val) 0 _ hRA ⟨30, by decide⟩ ⟨0, by decide⟩ 0#32 rfl _ hwA_30 _ (k1_off23_form ⟨1, by decide⟩ _ _) _ _
      have aA0_32 : pair0_region.sl.v2215_1 d L tab k r g1 g2 hR hin = AccMath.accVec (rowF fl tab (wL L).val (2 * t1.val) (2 * k.val)) (offF fl (wL L).val (2 * t1.val) (2 * k.val)) 0 32 := by
        unfold pair0_region.sl.v2215_1; rw [aA0_31]
        exact acc_step d L fl tab (wL L).val (2 * t1.val) (2 * k.val) 0 _ hRA ⟨31, by decide⟩ ⟨0, by decide⟩ 0#32 rfl _ hwA_31 _ (k1_off24_form ⟨1, by decide⟩ _ _) _ _
      have aA0_33 : pair0_region.sl.v1675_2 d L tab k r g1 g2 hR hin = AccMath.accVec (rowF fl tab (wL L).val (2 * t1.val) (2 * k.val)) (offF fl (wL L).val (2 * t1.val) (2 * k.val)) 0 33 := by
        unfold pair0_region.sl.v1675_2; rw [aA0_32]
        exact acc_step d L fl tab (wL L).val (2 * t1.val) (2 * k.val) 0 _ hRA ⟨32, by decide⟩ ⟨0, by decide⟩ 0#32 rfl _ hwA_32 _ (k1_off9_form ⟨2, by decide⟩ _ _) _ _
      have aA0_34 : pair0_region.sl.v1711_2 d L tab k r g1 g2 hR hin = AccMath.accVec (rowF fl tab (wL L).val (2 * t1.val) (2 * k.val)) (offF fl (wL L).val (2 * t1.val) (2 * k.val)) 0 34 := by
        unfold pair0_region.sl.v1711_2; rw [aA0_33]
        exact acc_step d L fl tab (wL L).val (2 * t1.val) (2 * k.val) 0 _ hRA ⟨33, by decide⟩ ⟨0, by decide⟩ 0#32 rfl _ hwA_33 _ (k1_off10_form ⟨2, by decide⟩ _ _) _ _
      have aA0_35 : pair0_region.sl.v1747_2 d L tab k r g1 g2 hR hin = AccMath.accVec (rowF fl tab (wL L).val (2 * t1.val) (2 * k.val)) (offF fl (wL L).val (2 * t1.val) (2 * k.val)) 0 35 := by
        unfold pair0_region.sl.v1747_2; rw [aA0_34]
        exact acc_step d L fl tab (wL L).val (2 * t1.val) (2 * k.val) 0 _ hRA ⟨34, by decide⟩ ⟨0, by decide⟩ 0#32 rfl _ hwA_34 _ (k1_off11_form ⟨2, by decide⟩ _ _) _ _
      have aA0_36 : pair0_region.sl.v1783_2 d L tab k r g1 g2 hR hin = AccMath.accVec (rowF fl tab (wL L).val (2 * t1.val) (2 * k.val)) (offF fl (wL L).val (2 * t1.val) (2 * k.val)) 0 36 := by
        unfold pair0_region.sl.v1783_2; rw [aA0_35]
        exact acc_step d L fl tab (wL L).val (2 * t1.val) (2 * k.val) 0 _ hRA ⟨35, by decide⟩ ⟨0, by decide⟩ 0#32 rfl _ hwA_35 _ (k1_off12_form ⟨2, by decide⟩ _ _) _ _
      have aA0_37 : pair0_region.sl.v1819_2 d L tab k r g1 g2 hR hin = AccMath.accVec (rowF fl tab (wL L).val (2 * t1.val) (2 * k.val)) (offF fl (wL L).val (2 * t1.val) (2 * k.val)) 0 37 := by
        unfold pair0_region.sl.v1819_2; rw [aA0_36]
        exact acc_step d L fl tab (wL L).val (2 * t1.val) (2 * k.val) 0 _ hRA ⟨36, by decide⟩ ⟨0, by decide⟩ 0#32 rfl _ hwA_36 _ (k1_off13_form ⟨2, by decide⟩ _ _) _ _
      have aA0_38 : pair0_region.sl.v1855_2 d L tab k r g1 g2 hR hin = AccMath.accVec (rowF fl tab (wL L).val (2 * t1.val) (2 * k.val)) (offF fl (wL L).val (2 * t1.val) (2 * k.val)) 0 38 := by
        unfold pair0_region.sl.v1855_2; rw [aA0_37]
        exact acc_step d L fl tab (wL L).val (2 * t1.val) (2 * k.val) 0 _ hRA ⟨37, by decide⟩ ⟨0, by decide⟩ 0#32 rfl _ hwA_37 _ (k1_off14_form ⟨2, by decide⟩ _ _) _ _
      have aA0_39 : pair0_region.sl.v1891_2 d L tab k r g1 g2 hR hin = AccMath.accVec (rowF fl tab (wL L).val (2 * t1.val) (2 * k.val)) (offF fl (wL L).val (2 * t1.val) (2 * k.val)) 0 39 := by
        unfold pair0_region.sl.v1891_2; rw [aA0_38]
        exact acc_step d L fl tab (wL L).val (2 * t1.val) (2 * k.val) 0 _ hRA ⟨38, by decide⟩ ⟨0, by decide⟩ 0#32 rfl _ hwA_38 _ (k1_off15_form ⟨2, by decide⟩ _ _) _ _
      have aA0_40 : pair0_region.sl.v1927_2 d L tab k r g1 g2 hR hin = AccMath.accVec (rowF fl tab (wL L).val (2 * t1.val) (2 * k.val)) (offF fl (wL L).val (2 * t1.val) (2 * k.val)) 0 40 := by
        unfold pair0_region.sl.v1927_2; rw [aA0_39]
        exact acc_step d L fl tab (wL L).val (2 * t1.val) (2 * k.val) 0 _ hRA ⟨39, by decide⟩ ⟨0, by decide⟩ 0#32 rfl _ hwA_39 _ (k1_off16_form ⟨2, by decide⟩ _ _) _ _
      have aA0_41 : pair0_region.sl.v1963_2 d L tab k r g1 g2 hR hin = AccMath.accVec (rowF fl tab (wL L).val (2 * t1.val) (2 * k.val)) (offF fl (wL L).val (2 * t1.val) (2 * k.val)) 0 41 := by
        unfold pair0_region.sl.v1963_2; rw [aA0_40]
        exact acc_step d L fl tab (wL L).val (2 * t1.val) (2 * k.val) 0 _ hRA ⟨40, by decide⟩ ⟨0, by decide⟩ 0#32 rfl _ hwA_40 _ (k1_off17_form ⟨2, by decide⟩ _ _) _ _
      have aA0_42 : pair0_region.sl.v1999_2 d L tab k r g1 g2 hR hin = AccMath.accVec (rowF fl tab (wL L).val (2 * t1.val) (2 * k.val)) (offF fl (wL L).val (2 * t1.val) (2 * k.val)) 0 42 := by
        unfold pair0_region.sl.v1999_2; rw [aA0_41]
        exact acc_step d L fl tab (wL L).val (2 * t1.val) (2 * k.val) 0 _ hRA ⟨41, by decide⟩ ⟨0, by decide⟩ 0#32 rfl _ hwA_41 _ (k1_off18_form ⟨2, by decide⟩ _ _) _ _
      have aA0_43 : pair0_region.sl.v2035_2 d L tab k r g1 g2 hR hin = AccMath.accVec (rowF fl tab (wL L).val (2 * t1.val) (2 * k.val)) (offF fl (wL L).val (2 * t1.val) (2 * k.val)) 0 43 := by
        unfold pair0_region.sl.v2035_2; rw [aA0_42]
        exact acc_step d L fl tab (wL L).val (2 * t1.val) (2 * k.val) 0 _ hRA ⟨42, by decide⟩ ⟨0, by decide⟩ 0#32 rfl _ hwA_42 _ (k1_off19_form ⟨2, by decide⟩ _ _) _ _
      have aA0_44 : pair0_region.sl.v2071_2 d L tab k r g1 g2 hR hin = AccMath.accVec (rowF fl tab (wL L).val (2 * t1.val) (2 * k.val)) (offF fl (wL L).val (2 * t1.val) (2 * k.val)) 0 44 := by
        unfold pair0_region.sl.v2071_2; rw [aA0_43]
        exact acc_step d L fl tab (wL L).val (2 * t1.val) (2 * k.val) 0 _ hRA ⟨43, by decide⟩ ⟨0, by decide⟩ 0#32 rfl _ hwA_43 _ (k1_off20_form ⟨2, by decide⟩ _ _) _ _
      have aA0_45 : pair0_region.sl.v2107_2 d L tab k r g1 g2 hR hin = AccMath.accVec (rowF fl tab (wL L).val (2 * t1.val) (2 * k.val)) (offF fl (wL L).val (2 * t1.val) (2 * k.val)) 0 45 := by
        unfold pair0_region.sl.v2107_2; rw [aA0_44]
        exact acc_step d L fl tab (wL L).val (2 * t1.val) (2 * k.val) 0 _ hRA ⟨44, by decide⟩ ⟨0, by decide⟩ 0#32 rfl _ hwA_44 _ (k1_off21_form ⟨2, by decide⟩ _ _) _ _
      have aA0_46 : pair0_region.sl.v2143_2 d L tab k r g1 g2 hR hin = AccMath.accVec (rowF fl tab (wL L).val (2 * t1.val) (2 * k.val)) (offF fl (wL L).val (2 * t1.val) (2 * k.val)) 0 46 := by
        unfold pair0_region.sl.v2143_2; rw [aA0_45]
        exact acc_step d L fl tab (wL L).val (2 * t1.val) (2 * k.val) 0 _ hRA ⟨45, by decide⟩ ⟨0, by decide⟩ 0#32 rfl _ hwA_45 _ (k1_off22_form ⟨2, by decide⟩ _ _) _ _
      have aA0_47 : pair0_region.sl.v2179_2 d L tab k r g1 g2 hR hin = AccMath.accVec (rowF fl tab (wL L).val (2 * t1.val) (2 * k.val)) (offF fl (wL L).val (2 * t1.val) (2 * k.val)) 0 47 := by
        unfold pair0_region.sl.v2179_2; rw [aA0_46]
        exact acc_step d L fl tab (wL L).val (2 * t1.val) (2 * k.val) 0 _ hRA ⟨46, by decide⟩ ⟨0, by decide⟩ 0#32 rfl _ hwA_46 _ (k1_off23_form ⟨2, by decide⟩ _ _) _ _
      have aA0_48 : pair0_region.sl.v2215_2 d L tab k r g1 g2 hR hin = AccMath.accVec (rowF fl tab (wL L).val (2 * t1.val) (2 * k.val)) (offF fl (wL L).val (2 * t1.val) (2 * k.val)) 0 48 := by
        unfold pair0_region.sl.v2215_2; rw [aA0_47]
        exact acc_step d L fl tab (wL L).val (2 * t1.val) (2 * k.val) 0 _ hRA ⟨47, by decide⟩ ⟨0, by decide⟩ 0#32 rfl _ hwA_47 _ (k1_off24_form ⟨2, by decide⟩ _ _) _ _
      have aA0_49 : pair0_region.sl.v1464 d L tab k r g1 g2 hR hin = AccMath.accVec (rowF fl tab (wL L).val (2 * t1.val) (2 * k.val)) (offF fl (wL L).val (2 * t1.val) (2 * k.val)) 0 49 := by
        unfold pair0_region.sl.v1464; rw [aA0_48]
        exact acc_step d L fl tab (wL L).val (2 * t1.val) (2 * k.val) 0 _ hRA ⟨48, by decide⟩ ⟨0, by decide⟩ 0#32 rfl _ hwA_48 _ (k1_off26_form _ _) _ _
      have aA0_50 : pair0_region.sl.v1498 d L tab k r g1 g2 hR hin = AccMath.accVec (rowF fl tab (wL L).val (2 * t1.val) (2 * k.val)) (offF fl (wL L).val (2 * t1.val) (2 * k.val)) 0 50 := by
        unfold pair0_region.sl.v1498; rw [aA0_49]
        exact acc_step d L fl tab (wL L).val (2 * t1.val) (2 * k.val) 0 _ hRA ⟨49, by decide⟩ ⟨0, by decide⟩ 0#32 rfl _ hwA_49 _ (k1_off27_form _ _) _ _
      have hPA0 : ∀ x : S1x1x16.Idx, pair0_region.sl.v1527 d L tab k r g1 g2 hR hin x = Spec.bagPartial fl tab (128 * (wL L).val + 16 * (2 * t1.val) + (2 * k.val)) (16 * 0 + (x 2).val) 50 := fun x => by
        unfold pair0_region.sl.v1527; rw [aA0_50]; exact payload_ok fl tab (wL L).val (2 * t1.val) (2 * k.val) ⟨0, by decide⟩ _ x
      have aA1_0 : pair0_region.sl.v1445 = AccMath.accVec (rowF fl tab (wL L).val (2 * t1.val) (2 * k.val)) (offF fl (wL L).val (2 * t1.val) (2 * k.val)) 1 0 := acc_zero fl tab (wL L).val (2 * t1.val) (2 * k.val) 1
      have aA1_1 : pair0_region.sl.v1683 d L tab k r g1 g2 hR hin = AccMath.accVec (rowF fl tab (wL L).val (2 * t1.val) (2 * k.val)) (offF fl (wL L).val (2 * t1.val) (2 * k.val)) 1 1 := by
        unfold pair0_region.sl.v1683; rw [aA1_0]
        exact acc_step d L fl tab (wL L).val (2 * t1.val) (2 * k.val) 0 _ hRA ⟨0, by decide⟩ ⟨1, by decide⟩ 16#32 rfl _ hwA_0 _ (k1_off9_form ⟨0, by decide⟩ _ _) _ _
      have aA1_2 : pair0_region.sl.v1719 d L tab k r g1 g2 hR hin = AccMath.accVec (rowF fl tab (wL L).val (2 * t1.val) (2 * k.val)) (offF fl (wL L).val (2 * t1.val) (2 * k.val)) 1 2 := by
        unfold pair0_region.sl.v1719; rw [aA1_1]
        exact acc_step d L fl tab (wL L).val (2 * t1.val) (2 * k.val) 0 _ hRA ⟨1, by decide⟩ ⟨1, by decide⟩ 16#32 rfl _ hwA_1 _ (k1_off10_form ⟨0, by decide⟩ _ _) _ _
      have aA1_3 : pair0_region.sl.v1755 d L tab k r g1 g2 hR hin = AccMath.accVec (rowF fl tab (wL L).val (2 * t1.val) (2 * k.val)) (offF fl (wL L).val (2 * t1.val) (2 * k.val)) 1 3 := by
        unfold pair0_region.sl.v1755; rw [aA1_2]
        exact acc_step d L fl tab (wL L).val (2 * t1.val) (2 * k.val) 0 _ hRA ⟨2, by decide⟩ ⟨1, by decide⟩ 16#32 rfl _ hwA_2 _ (k1_off11_form ⟨0, by decide⟩ _ _) _ _
      have aA1_4 : pair0_region.sl.v1791 d L tab k r g1 g2 hR hin = AccMath.accVec (rowF fl tab (wL L).val (2 * t1.val) (2 * k.val)) (offF fl (wL L).val (2 * t1.val) (2 * k.val)) 1 4 := by
        unfold pair0_region.sl.v1791; rw [aA1_3]
        exact acc_step d L fl tab (wL L).val (2 * t1.val) (2 * k.val) 0 _ hRA ⟨3, by decide⟩ ⟨1, by decide⟩ 16#32 rfl _ hwA_3 _ (k1_off12_form ⟨0, by decide⟩ _ _) _ _
      have aA1_5 : pair0_region.sl.v1827 d L tab k r g1 g2 hR hin = AccMath.accVec (rowF fl tab (wL L).val (2 * t1.val) (2 * k.val)) (offF fl (wL L).val (2 * t1.val) (2 * k.val)) 1 5 := by
        unfold pair0_region.sl.v1827; rw [aA1_4]
        exact acc_step d L fl tab (wL L).val (2 * t1.val) (2 * k.val) 0 _ hRA ⟨4, by decide⟩ ⟨1, by decide⟩ 16#32 rfl _ hwA_4 _ (k1_off13_form ⟨0, by decide⟩ _ _) _ _
      have aA1_6 : pair0_region.sl.v1863 d L tab k r g1 g2 hR hin = AccMath.accVec (rowF fl tab (wL L).val (2 * t1.val) (2 * k.val)) (offF fl (wL L).val (2 * t1.val) (2 * k.val)) 1 6 := by
        unfold pair0_region.sl.v1863; rw [aA1_5]
        exact acc_step d L fl tab (wL L).val (2 * t1.val) (2 * k.val) 0 _ hRA ⟨5, by decide⟩ ⟨1, by decide⟩ 16#32 rfl _ hwA_5 _ (k1_off14_form ⟨0, by decide⟩ _ _) _ _
      have aA1_7 : pair0_region.sl.v1899 d L tab k r g1 g2 hR hin = AccMath.accVec (rowF fl tab (wL L).val (2 * t1.val) (2 * k.val)) (offF fl (wL L).val (2 * t1.val) (2 * k.val)) 1 7 := by
        unfold pair0_region.sl.v1899; rw [aA1_6]
        exact acc_step d L fl tab (wL L).val (2 * t1.val) (2 * k.val) 0 _ hRA ⟨6, by decide⟩ ⟨1, by decide⟩ 16#32 rfl _ hwA_6 _ (k1_off15_form ⟨0, by decide⟩ _ _) _ _
      have aA1_8 : pair0_region.sl.v1935 d L tab k r g1 g2 hR hin = AccMath.accVec (rowF fl tab (wL L).val (2 * t1.val) (2 * k.val)) (offF fl (wL L).val (2 * t1.val) (2 * k.val)) 1 8 := by
        unfold pair0_region.sl.v1935; rw [aA1_7]
        exact acc_step d L fl tab (wL L).val (2 * t1.val) (2 * k.val) 0 _ hRA ⟨7, by decide⟩ ⟨1, by decide⟩ 16#32 rfl _ hwA_7 _ (k1_off16_form ⟨0, by decide⟩ _ _) _ _
      have aA1_9 : pair0_region.sl.v1971 d L tab k r g1 g2 hR hin = AccMath.accVec (rowF fl tab (wL L).val (2 * t1.val) (2 * k.val)) (offF fl (wL L).val (2 * t1.val) (2 * k.val)) 1 9 := by
        unfold pair0_region.sl.v1971; rw [aA1_8]
        exact acc_step d L fl tab (wL L).val (2 * t1.val) (2 * k.val) 0 _ hRA ⟨8, by decide⟩ ⟨1, by decide⟩ 16#32 rfl _ hwA_8 _ (k1_off17_form ⟨0, by decide⟩ _ _) _ _
      have aA1_10 : pair0_region.sl.v2007 d L tab k r g1 g2 hR hin = AccMath.accVec (rowF fl tab (wL L).val (2 * t1.val) (2 * k.val)) (offF fl (wL L).val (2 * t1.val) (2 * k.val)) 1 10 := by
        unfold pair0_region.sl.v2007; rw [aA1_9]
        exact acc_step d L fl tab (wL L).val (2 * t1.val) (2 * k.val) 0 _ hRA ⟨9, by decide⟩ ⟨1, by decide⟩ 16#32 rfl _ hwA_9 _ (k1_off18_form ⟨0, by decide⟩ _ _) _ _
      have aA1_11 : pair0_region.sl.v2043 d L tab k r g1 g2 hR hin = AccMath.accVec (rowF fl tab (wL L).val (2 * t1.val) (2 * k.val)) (offF fl (wL L).val (2 * t1.val) (2 * k.val)) 1 11 := by
        unfold pair0_region.sl.v2043; rw [aA1_10]
        exact acc_step d L fl tab (wL L).val (2 * t1.val) (2 * k.val) 0 _ hRA ⟨10, by decide⟩ ⟨1, by decide⟩ 16#32 rfl _ hwA_10 _ (k1_off19_form ⟨0, by decide⟩ _ _) _ _
      have aA1_12 : pair0_region.sl.v2079 d L tab k r g1 g2 hR hin = AccMath.accVec (rowF fl tab (wL L).val (2 * t1.val) (2 * k.val)) (offF fl (wL L).val (2 * t1.val) (2 * k.val)) 1 12 := by
        unfold pair0_region.sl.v2079; rw [aA1_11]
        exact acc_step d L fl tab (wL L).val (2 * t1.val) (2 * k.val) 0 _ hRA ⟨11, by decide⟩ ⟨1, by decide⟩ 16#32 rfl _ hwA_11 _ (k1_off20_form ⟨0, by decide⟩ _ _) _ _
      have aA1_13 : pair0_region.sl.v2115 d L tab k r g1 g2 hR hin = AccMath.accVec (rowF fl tab (wL L).val (2 * t1.val) (2 * k.val)) (offF fl (wL L).val (2 * t1.val) (2 * k.val)) 1 13 := by
        unfold pair0_region.sl.v2115; rw [aA1_12]
        exact acc_step d L fl tab (wL L).val (2 * t1.val) (2 * k.val) 0 _ hRA ⟨12, by decide⟩ ⟨1, by decide⟩ 16#32 rfl _ hwA_12 _ (k1_off21_form ⟨0, by decide⟩ _ _) _ _
      have aA1_14 : pair0_region.sl.v2151 d L tab k r g1 g2 hR hin = AccMath.accVec (rowF fl tab (wL L).val (2 * t1.val) (2 * k.val)) (offF fl (wL L).val (2 * t1.val) (2 * k.val)) 1 14 := by
        unfold pair0_region.sl.v2151; rw [aA1_13]
        exact acc_step d L fl tab (wL L).val (2 * t1.val) (2 * k.val) 0 _ hRA ⟨13, by decide⟩ ⟨1, by decide⟩ 16#32 rfl _ hwA_13 _ (k1_off22_form ⟨0, by decide⟩ _ _) _ _
      have aA1_15 : pair0_region.sl.v2187 d L tab k r g1 g2 hR hin = AccMath.accVec (rowF fl tab (wL L).val (2 * t1.val) (2 * k.val)) (offF fl (wL L).val (2 * t1.val) (2 * k.val)) 1 15 := by
        unfold pair0_region.sl.v2187; rw [aA1_14]
        exact acc_step d L fl tab (wL L).val (2 * t1.val) (2 * k.val) 0 _ hRA ⟨14, by decide⟩ ⟨1, by decide⟩ 16#32 rfl _ hwA_14 _ (k1_off23_form ⟨0, by decide⟩ _ _) _ _
      have aA1_16 : pair0_region.sl.v2223 d L tab k r g1 g2 hR hin = AccMath.accVec (rowF fl tab (wL L).val (2 * t1.val) (2 * k.val)) (offF fl (wL L).val (2 * t1.val) (2 * k.val)) 1 16 := by
        unfold pair0_region.sl.v2223; rw [aA1_15]
        exact acc_step d L fl tab (wL L).val (2 * t1.val) (2 * k.val) 0 _ hRA ⟨15, by decide⟩ ⟨1, by decide⟩ 16#32 rfl _ hwA_15 _ (k1_off24_form ⟨0, by decide⟩ _ _) _ _
      have aA1_17 : pair0_region.sl.v1683_1 d L tab k r g1 g2 hR hin = AccMath.accVec (rowF fl tab (wL L).val (2 * t1.val) (2 * k.val)) (offF fl (wL L).val (2 * t1.val) (2 * k.val)) 1 17 := by
        unfold pair0_region.sl.v1683_1; rw [aA1_16]
        exact acc_step d L fl tab (wL L).val (2 * t1.val) (2 * k.val) 0 _ hRA ⟨16, by decide⟩ ⟨1, by decide⟩ 16#32 rfl _ hwA_16 _ (k1_off9_form ⟨1, by decide⟩ _ _) _ _
      have aA1_18 : pair0_region.sl.v1719_1 d L tab k r g1 g2 hR hin = AccMath.accVec (rowF fl tab (wL L).val (2 * t1.val) (2 * k.val)) (offF fl (wL L).val (2 * t1.val) (2 * k.val)) 1 18 := by
        unfold pair0_region.sl.v1719_1; rw [aA1_17]
        exact acc_step d L fl tab (wL L).val (2 * t1.val) (2 * k.val) 0 _ hRA ⟨17, by decide⟩ ⟨1, by decide⟩ 16#32 rfl _ hwA_17 _ (k1_off10_form ⟨1, by decide⟩ _ _) _ _
      have aA1_19 : pair0_region.sl.v1755_1 d L tab k r g1 g2 hR hin = AccMath.accVec (rowF fl tab (wL L).val (2 * t1.val) (2 * k.val)) (offF fl (wL L).val (2 * t1.val) (2 * k.val)) 1 19 := by
        unfold pair0_region.sl.v1755_1; rw [aA1_18]
        exact acc_step d L fl tab (wL L).val (2 * t1.val) (2 * k.val) 0 _ hRA ⟨18, by decide⟩ ⟨1, by decide⟩ 16#32 rfl _ hwA_18 _ (k1_off11_form ⟨1, by decide⟩ _ _) _ _
      have aA1_20 : pair0_region.sl.v1791_1 d L tab k r g1 g2 hR hin = AccMath.accVec (rowF fl tab (wL L).val (2 * t1.val) (2 * k.val)) (offF fl (wL L).val (2 * t1.val) (2 * k.val)) 1 20 := by
        unfold pair0_region.sl.v1791_1; rw [aA1_19]
        exact acc_step d L fl tab (wL L).val (2 * t1.val) (2 * k.val) 0 _ hRA ⟨19, by decide⟩ ⟨1, by decide⟩ 16#32 rfl _ hwA_19 _ (k1_off12_form ⟨1, by decide⟩ _ _) _ _
      have aA1_21 : pair0_region.sl.v1827_1 d L tab k r g1 g2 hR hin = AccMath.accVec (rowF fl tab (wL L).val (2 * t1.val) (2 * k.val)) (offF fl (wL L).val (2 * t1.val) (2 * k.val)) 1 21 := by
        unfold pair0_region.sl.v1827_1; rw [aA1_20]
        exact acc_step d L fl tab (wL L).val (2 * t1.val) (2 * k.val) 0 _ hRA ⟨20, by decide⟩ ⟨1, by decide⟩ 16#32 rfl _ hwA_20 _ (k1_off13_form ⟨1, by decide⟩ _ _) _ _
      have aA1_22 : pair0_region.sl.v1863_1 d L tab k r g1 g2 hR hin = AccMath.accVec (rowF fl tab (wL L).val (2 * t1.val) (2 * k.val)) (offF fl (wL L).val (2 * t1.val) (2 * k.val)) 1 22 := by
        unfold pair0_region.sl.v1863_1; rw [aA1_21]
        exact acc_step d L fl tab (wL L).val (2 * t1.val) (2 * k.val) 0 _ hRA ⟨21, by decide⟩ ⟨1, by decide⟩ 16#32 rfl _ hwA_21 _ (k1_off14_form ⟨1, by decide⟩ _ _) _ _
      have aA1_23 : pair0_region.sl.v1899_1 d L tab k r g1 g2 hR hin = AccMath.accVec (rowF fl tab (wL L).val (2 * t1.val) (2 * k.val)) (offF fl (wL L).val (2 * t1.val) (2 * k.val)) 1 23 := by
        unfold pair0_region.sl.v1899_1; rw [aA1_22]
        exact acc_step d L fl tab (wL L).val (2 * t1.val) (2 * k.val) 0 _ hRA ⟨22, by decide⟩ ⟨1, by decide⟩ 16#32 rfl _ hwA_22 _ (k1_off15_form ⟨1, by decide⟩ _ _) _ _
      have aA1_24 : pair0_region.sl.v1935_1 d L tab k r g1 g2 hR hin = AccMath.accVec (rowF fl tab (wL L).val (2 * t1.val) (2 * k.val)) (offF fl (wL L).val (2 * t1.val) (2 * k.val)) 1 24 := by
        unfold pair0_region.sl.v1935_1; rw [aA1_23]
        exact acc_step d L fl tab (wL L).val (2 * t1.val) (2 * k.val) 0 _ hRA ⟨23, by decide⟩ ⟨1, by decide⟩ 16#32 rfl _ hwA_23 _ (k1_off16_form ⟨1, by decide⟩ _ _) _ _
      have aA1_25 : pair0_region.sl.v1971_1 d L tab k r g1 g2 hR hin = AccMath.accVec (rowF fl tab (wL L).val (2 * t1.val) (2 * k.val)) (offF fl (wL L).val (2 * t1.val) (2 * k.val)) 1 25 := by
        unfold pair0_region.sl.v1971_1; rw [aA1_24]
        exact acc_step d L fl tab (wL L).val (2 * t1.val) (2 * k.val) 0 _ hRA ⟨24, by decide⟩ ⟨1, by decide⟩ 16#32 rfl _ hwA_24 _ (k1_off17_form ⟨1, by decide⟩ _ _) _ _
      have aA1_26 : pair0_region.sl.v2007_1 d L tab k r g1 g2 hR hin = AccMath.accVec (rowF fl tab (wL L).val (2 * t1.val) (2 * k.val)) (offF fl (wL L).val (2 * t1.val) (2 * k.val)) 1 26 := by
        unfold pair0_region.sl.v2007_1; rw [aA1_25]
        exact acc_step d L fl tab (wL L).val (2 * t1.val) (2 * k.val) 0 _ hRA ⟨25, by decide⟩ ⟨1, by decide⟩ 16#32 rfl _ hwA_25 _ (k1_off18_form ⟨1, by decide⟩ _ _) _ _
      have aA1_27 : pair0_region.sl.v2043_1 d L tab k r g1 g2 hR hin = AccMath.accVec (rowF fl tab (wL L).val (2 * t1.val) (2 * k.val)) (offF fl (wL L).val (2 * t1.val) (2 * k.val)) 1 27 := by
        unfold pair0_region.sl.v2043_1; rw [aA1_26]
        exact acc_step d L fl tab (wL L).val (2 * t1.val) (2 * k.val) 0 _ hRA ⟨26, by decide⟩ ⟨1, by decide⟩ 16#32 rfl _ hwA_26 _ (k1_off19_form ⟨1, by decide⟩ _ _) _ _
      have aA1_28 : pair0_region.sl.v2079_1 d L tab k r g1 g2 hR hin = AccMath.accVec (rowF fl tab (wL L).val (2 * t1.val) (2 * k.val)) (offF fl (wL L).val (2 * t1.val) (2 * k.val)) 1 28 := by
        unfold pair0_region.sl.v2079_1; rw [aA1_27]
        exact acc_step d L fl tab (wL L).val (2 * t1.val) (2 * k.val) 0 _ hRA ⟨27, by decide⟩ ⟨1, by decide⟩ 16#32 rfl _ hwA_27 _ (k1_off20_form ⟨1, by decide⟩ _ _) _ _
      have aA1_29 : pair0_region.sl.v2115_1 d L tab k r g1 g2 hR hin = AccMath.accVec (rowF fl tab (wL L).val (2 * t1.val) (2 * k.val)) (offF fl (wL L).val (2 * t1.val) (2 * k.val)) 1 29 := by
        unfold pair0_region.sl.v2115_1; rw [aA1_28]
        exact acc_step d L fl tab (wL L).val (2 * t1.val) (2 * k.val) 0 _ hRA ⟨28, by decide⟩ ⟨1, by decide⟩ 16#32 rfl _ hwA_28 _ (k1_off21_form ⟨1, by decide⟩ _ _) _ _
      have aA1_30 : pair0_region.sl.v2151_1 d L tab k r g1 g2 hR hin = AccMath.accVec (rowF fl tab (wL L).val (2 * t1.val) (2 * k.val)) (offF fl (wL L).val (2 * t1.val) (2 * k.val)) 1 30 := by
        unfold pair0_region.sl.v2151_1; rw [aA1_29]
        exact acc_step d L fl tab (wL L).val (2 * t1.val) (2 * k.val) 0 _ hRA ⟨29, by decide⟩ ⟨1, by decide⟩ 16#32 rfl _ hwA_29 _ (k1_off22_form ⟨1, by decide⟩ _ _) _ _
      have aA1_31 : pair0_region.sl.v2187_1 d L tab k r g1 g2 hR hin = AccMath.accVec (rowF fl tab (wL L).val (2 * t1.val) (2 * k.val)) (offF fl (wL L).val (2 * t1.val) (2 * k.val)) 1 31 := by
        unfold pair0_region.sl.v2187_1; rw [aA1_30]
        exact acc_step d L fl tab (wL L).val (2 * t1.val) (2 * k.val) 0 _ hRA ⟨30, by decide⟩ ⟨1, by decide⟩ 16#32 rfl _ hwA_30 _ (k1_off23_form ⟨1, by decide⟩ _ _) _ _
      have aA1_32 : pair0_region.sl.v2223_1 d L tab k r g1 g2 hR hin = AccMath.accVec (rowF fl tab (wL L).val (2 * t1.val) (2 * k.val)) (offF fl (wL L).val (2 * t1.val) (2 * k.val)) 1 32 := by
        unfold pair0_region.sl.v2223_1; rw [aA1_31]
        exact acc_step d L fl tab (wL L).val (2 * t1.val) (2 * k.val) 0 _ hRA ⟨31, by decide⟩ ⟨1, by decide⟩ 16#32 rfl _ hwA_31 _ (k1_off24_form ⟨1, by decide⟩ _ _) _ _
      have aA1_33 : pair0_region.sl.v1683_2 d L tab k r g1 g2 hR hin = AccMath.accVec (rowF fl tab (wL L).val (2 * t1.val) (2 * k.val)) (offF fl (wL L).val (2 * t1.val) (2 * k.val)) 1 33 := by
        unfold pair0_region.sl.v1683_2; rw [aA1_32]
        exact acc_step d L fl tab (wL L).val (2 * t1.val) (2 * k.val) 0 _ hRA ⟨32, by decide⟩ ⟨1, by decide⟩ 16#32 rfl _ hwA_32 _ (k1_off9_form ⟨2, by decide⟩ _ _) _ _
      have aA1_34 : pair0_region.sl.v1719_2 d L tab k r g1 g2 hR hin = AccMath.accVec (rowF fl tab (wL L).val (2 * t1.val) (2 * k.val)) (offF fl (wL L).val (2 * t1.val) (2 * k.val)) 1 34 := by
        unfold pair0_region.sl.v1719_2; rw [aA1_33]
        exact acc_step d L fl tab (wL L).val (2 * t1.val) (2 * k.val) 0 _ hRA ⟨33, by decide⟩ ⟨1, by decide⟩ 16#32 rfl _ hwA_33 _ (k1_off10_form ⟨2, by decide⟩ _ _) _ _
      have aA1_35 : pair0_region.sl.v1755_2 d L tab k r g1 g2 hR hin = AccMath.accVec (rowF fl tab (wL L).val (2 * t1.val) (2 * k.val)) (offF fl (wL L).val (2 * t1.val) (2 * k.val)) 1 35 := by
        unfold pair0_region.sl.v1755_2; rw [aA1_34]
        exact acc_step d L fl tab (wL L).val (2 * t1.val) (2 * k.val) 0 _ hRA ⟨34, by decide⟩ ⟨1, by decide⟩ 16#32 rfl _ hwA_34 _ (k1_off11_form ⟨2, by decide⟩ _ _) _ _
      have aA1_36 : pair0_region.sl.v1791_2 d L tab k r g1 g2 hR hin = AccMath.accVec (rowF fl tab (wL L).val (2 * t1.val) (2 * k.val)) (offF fl (wL L).val (2 * t1.val) (2 * k.val)) 1 36 := by
        unfold pair0_region.sl.v1791_2; rw [aA1_35]
        exact acc_step d L fl tab (wL L).val (2 * t1.val) (2 * k.val) 0 _ hRA ⟨35, by decide⟩ ⟨1, by decide⟩ 16#32 rfl _ hwA_35 _ (k1_off12_form ⟨2, by decide⟩ _ _) _ _
      have aA1_37 : pair0_region.sl.v1827_2 d L tab k r g1 g2 hR hin = AccMath.accVec (rowF fl tab (wL L).val (2 * t1.val) (2 * k.val)) (offF fl (wL L).val (2 * t1.val) (2 * k.val)) 1 37 := by
        unfold pair0_region.sl.v1827_2; rw [aA1_36]
        exact acc_step d L fl tab (wL L).val (2 * t1.val) (2 * k.val) 0 _ hRA ⟨36, by decide⟩ ⟨1, by decide⟩ 16#32 rfl _ hwA_36 _ (k1_off13_form ⟨2, by decide⟩ _ _) _ _
      have aA1_38 : pair0_region.sl.v1863_2 d L tab k r g1 g2 hR hin = AccMath.accVec (rowF fl tab (wL L).val (2 * t1.val) (2 * k.val)) (offF fl (wL L).val (2 * t1.val) (2 * k.val)) 1 38 := by
        unfold pair0_region.sl.v1863_2; rw [aA1_37]
        exact acc_step d L fl tab (wL L).val (2 * t1.val) (2 * k.val) 0 _ hRA ⟨37, by decide⟩ ⟨1, by decide⟩ 16#32 rfl _ hwA_37 _ (k1_off14_form ⟨2, by decide⟩ _ _) _ _
      have aA1_39 : pair0_region.sl.v1899_2 d L tab k r g1 g2 hR hin = AccMath.accVec (rowF fl tab (wL L).val (2 * t1.val) (2 * k.val)) (offF fl (wL L).val (2 * t1.val) (2 * k.val)) 1 39 := by
        unfold pair0_region.sl.v1899_2; rw [aA1_38]
        exact acc_step d L fl tab (wL L).val (2 * t1.val) (2 * k.val) 0 _ hRA ⟨38, by decide⟩ ⟨1, by decide⟩ 16#32 rfl _ hwA_38 _ (k1_off15_form ⟨2, by decide⟩ _ _) _ _
      have aA1_40 : pair0_region.sl.v1935_2 d L tab k r g1 g2 hR hin = AccMath.accVec (rowF fl tab (wL L).val (2 * t1.val) (2 * k.val)) (offF fl (wL L).val (2 * t1.val) (2 * k.val)) 1 40 := by
        unfold pair0_region.sl.v1935_2; rw [aA1_39]
        exact acc_step d L fl tab (wL L).val (2 * t1.val) (2 * k.val) 0 _ hRA ⟨39, by decide⟩ ⟨1, by decide⟩ 16#32 rfl _ hwA_39 _ (k1_off16_form ⟨2, by decide⟩ _ _) _ _
      have aA1_41 : pair0_region.sl.v1971_2 d L tab k r g1 g2 hR hin = AccMath.accVec (rowF fl tab (wL L).val (2 * t1.val) (2 * k.val)) (offF fl (wL L).val (2 * t1.val) (2 * k.val)) 1 41 := by
        unfold pair0_region.sl.v1971_2; rw [aA1_40]
        exact acc_step d L fl tab (wL L).val (2 * t1.val) (2 * k.val) 0 _ hRA ⟨40, by decide⟩ ⟨1, by decide⟩ 16#32 rfl _ hwA_40 _ (k1_off17_form ⟨2, by decide⟩ _ _) _ _
      have aA1_42 : pair0_region.sl.v2007_2 d L tab k r g1 g2 hR hin = AccMath.accVec (rowF fl tab (wL L).val (2 * t1.val) (2 * k.val)) (offF fl (wL L).val (2 * t1.val) (2 * k.val)) 1 42 := by
        unfold pair0_region.sl.v2007_2; rw [aA1_41]
        exact acc_step d L fl tab (wL L).val (2 * t1.val) (2 * k.val) 0 _ hRA ⟨41, by decide⟩ ⟨1, by decide⟩ 16#32 rfl _ hwA_41 _ (k1_off18_form ⟨2, by decide⟩ _ _) _ _
      have aA1_43 : pair0_region.sl.v2043_2 d L tab k r g1 g2 hR hin = AccMath.accVec (rowF fl tab (wL L).val (2 * t1.val) (2 * k.val)) (offF fl (wL L).val (2 * t1.val) (2 * k.val)) 1 43 := by
        unfold pair0_region.sl.v2043_2; rw [aA1_42]
        exact acc_step d L fl tab (wL L).val (2 * t1.val) (2 * k.val) 0 _ hRA ⟨42, by decide⟩ ⟨1, by decide⟩ 16#32 rfl _ hwA_42 _ (k1_off19_form ⟨2, by decide⟩ _ _) _ _
      have aA1_44 : pair0_region.sl.v2079_2 d L tab k r g1 g2 hR hin = AccMath.accVec (rowF fl tab (wL L).val (2 * t1.val) (2 * k.val)) (offF fl (wL L).val (2 * t1.val) (2 * k.val)) 1 44 := by
        unfold pair0_region.sl.v2079_2; rw [aA1_43]
        exact acc_step d L fl tab (wL L).val (2 * t1.val) (2 * k.val) 0 _ hRA ⟨43, by decide⟩ ⟨1, by decide⟩ 16#32 rfl _ hwA_43 _ (k1_off20_form ⟨2, by decide⟩ _ _) _ _
      have aA1_45 : pair0_region.sl.v2115_2 d L tab k r g1 g2 hR hin = AccMath.accVec (rowF fl tab (wL L).val (2 * t1.val) (2 * k.val)) (offF fl (wL L).val (2 * t1.val) (2 * k.val)) 1 45 := by
        unfold pair0_region.sl.v2115_2; rw [aA1_44]
        exact acc_step d L fl tab (wL L).val (2 * t1.val) (2 * k.val) 0 _ hRA ⟨44, by decide⟩ ⟨1, by decide⟩ 16#32 rfl _ hwA_44 _ (k1_off21_form ⟨2, by decide⟩ _ _) _ _
      have aA1_46 : pair0_region.sl.v2151_2 d L tab k r g1 g2 hR hin = AccMath.accVec (rowF fl tab (wL L).val (2 * t1.val) (2 * k.val)) (offF fl (wL L).val (2 * t1.val) (2 * k.val)) 1 46 := by
        unfold pair0_region.sl.v2151_2; rw [aA1_45]
        exact acc_step d L fl tab (wL L).val (2 * t1.val) (2 * k.val) 0 _ hRA ⟨45, by decide⟩ ⟨1, by decide⟩ 16#32 rfl _ hwA_45 _ (k1_off22_form ⟨2, by decide⟩ _ _) _ _
      have aA1_47 : pair0_region.sl.v2187_2 d L tab k r g1 g2 hR hin = AccMath.accVec (rowF fl tab (wL L).val (2 * t1.val) (2 * k.val)) (offF fl (wL L).val (2 * t1.val) (2 * k.val)) 1 47 := by
        unfold pair0_region.sl.v2187_2; rw [aA1_46]
        exact acc_step d L fl tab (wL L).val (2 * t1.val) (2 * k.val) 0 _ hRA ⟨46, by decide⟩ ⟨1, by decide⟩ 16#32 rfl _ hwA_46 _ (k1_off23_form ⟨2, by decide⟩ _ _) _ _
      have aA1_48 : pair0_region.sl.v2223_2 d L tab k r g1 g2 hR hin = AccMath.accVec (rowF fl tab (wL L).val (2 * t1.val) (2 * k.val)) (offF fl (wL L).val (2 * t1.val) (2 * k.val)) 1 48 := by
        unfold pair0_region.sl.v2223_2; rw [aA1_47]
        exact acc_step d L fl tab (wL L).val (2 * t1.val) (2 * k.val) 0 _ hRA ⟨47, by decide⟩ ⟨1, by decide⟩ 16#32 rfl _ hwA_47 _ (k1_off24_form ⟨2, by decide⟩ _ _) _ _
      have aA1_49 : pair0_region.sl.v1472 d L tab k r g1 g2 hR hin = AccMath.accVec (rowF fl tab (wL L).val (2 * t1.val) (2 * k.val)) (offF fl (wL L).val (2 * t1.val) (2 * k.val)) 1 49 := by
        unfold pair0_region.sl.v1472; rw [aA1_48]
        exact acc_step d L fl tab (wL L).val (2 * t1.val) (2 * k.val) 0 _ hRA ⟨48, by decide⟩ ⟨1, by decide⟩ 16#32 rfl _ hwA_48 _ (k1_off26_form _ _) _ _
      have aA1_50 : pair0_region.sl.v1506 d L tab k r g1 g2 hR hin = AccMath.accVec (rowF fl tab (wL L).val (2 * t1.val) (2 * k.val)) (offF fl (wL L).val (2 * t1.val) (2 * k.val)) 1 50 := by
        unfold pair0_region.sl.v1506; rw [aA1_49]
        exact acc_step d L fl tab (wL L).val (2 * t1.val) (2 * k.val) 0 _ hRA ⟨49, by decide⟩ ⟨1, by decide⟩ 16#32 rfl _ hwA_49 _ (k1_off27_form _ _) _ _
      have hPA1 : ∀ x : S1x1x16.Idx, pair0_region.sl.v1532 d L tab k r g1 g2 hR hin x = Spec.bagPartial fl tab (128 * (wL L).val + 16 * (2 * t1.val) + (2 * k.val)) (16 * 1 + (x 2).val) 50 := fun x => by
        unfold pair0_region.sl.v1532; rw [aA1_50]; exact payload_ok fl tab (wL L).val (2 * t1.val) (2 * k.val) ⟨1, by decide⟩ _ x
      have aA2_0 : pair0_region.sl.v1445 = AccMath.accVec (rowF fl tab (wL L).val (2 * t1.val) (2 * k.val)) (offF fl (wL L).val (2 * t1.val) (2 * k.val)) 2 0 := acc_zero fl tab (wL L).val (2 * t1.val) (2 * k.val) 2
      have aA2_1 : pair0_region.sl.v1691 d L tab k r g1 g2 hR hin = AccMath.accVec (rowF fl tab (wL L).val (2 * t1.val) (2 * k.val)) (offF fl (wL L).val (2 * t1.val) (2 * k.val)) 2 1 := by
        unfold pair0_region.sl.v1691; rw [aA2_0]
        exact acc_step d L fl tab (wL L).val (2 * t1.val) (2 * k.val) 0 _ hRA ⟨0, by decide⟩ ⟨2, by decide⟩ 32#32 rfl _ hwA_0 _ (k1_off9_form ⟨0, by decide⟩ _ _) _ _
      have aA2_2 : pair0_region.sl.v1727 d L tab k r g1 g2 hR hin = AccMath.accVec (rowF fl tab (wL L).val (2 * t1.val) (2 * k.val)) (offF fl (wL L).val (2 * t1.val) (2 * k.val)) 2 2 := by
        unfold pair0_region.sl.v1727; rw [aA2_1]
        exact acc_step d L fl tab (wL L).val (2 * t1.val) (2 * k.val) 0 _ hRA ⟨1, by decide⟩ ⟨2, by decide⟩ 32#32 rfl _ hwA_1 _ (k1_off10_form ⟨0, by decide⟩ _ _) _ _
      have aA2_3 : pair0_region.sl.v1763 d L tab k r g1 g2 hR hin = AccMath.accVec (rowF fl tab (wL L).val (2 * t1.val) (2 * k.val)) (offF fl (wL L).val (2 * t1.val) (2 * k.val)) 2 3 := by
        unfold pair0_region.sl.v1763; rw [aA2_2]
        exact acc_step d L fl tab (wL L).val (2 * t1.val) (2 * k.val) 0 _ hRA ⟨2, by decide⟩ ⟨2, by decide⟩ 32#32 rfl _ hwA_2 _ (k1_off11_form ⟨0, by decide⟩ _ _) _ _
      have aA2_4 : pair0_region.sl.v1799 d L tab k r g1 g2 hR hin = AccMath.accVec (rowF fl tab (wL L).val (2 * t1.val) (2 * k.val)) (offF fl (wL L).val (2 * t1.val) (2 * k.val)) 2 4 := by
        unfold pair0_region.sl.v1799; rw [aA2_3]
        exact acc_step d L fl tab (wL L).val (2 * t1.val) (2 * k.val) 0 _ hRA ⟨3, by decide⟩ ⟨2, by decide⟩ 32#32 rfl _ hwA_3 _ (k1_off12_form ⟨0, by decide⟩ _ _) _ _
      have aA2_5 : pair0_region.sl.v1835 d L tab k r g1 g2 hR hin = AccMath.accVec (rowF fl tab (wL L).val (2 * t1.val) (2 * k.val)) (offF fl (wL L).val (2 * t1.val) (2 * k.val)) 2 5 := by
        unfold pair0_region.sl.v1835; rw [aA2_4]
        exact acc_step d L fl tab (wL L).val (2 * t1.val) (2 * k.val) 0 _ hRA ⟨4, by decide⟩ ⟨2, by decide⟩ 32#32 rfl _ hwA_4 _ (k1_off13_form ⟨0, by decide⟩ _ _) _ _
      have aA2_6 : pair0_region.sl.v1871 d L tab k r g1 g2 hR hin = AccMath.accVec (rowF fl tab (wL L).val (2 * t1.val) (2 * k.val)) (offF fl (wL L).val (2 * t1.val) (2 * k.val)) 2 6 := by
        unfold pair0_region.sl.v1871; rw [aA2_5]
        exact acc_step d L fl tab (wL L).val (2 * t1.val) (2 * k.val) 0 _ hRA ⟨5, by decide⟩ ⟨2, by decide⟩ 32#32 rfl _ hwA_5 _ (k1_off14_form ⟨0, by decide⟩ _ _) _ _
      have aA2_7 : pair0_region.sl.v1907 d L tab k r g1 g2 hR hin = AccMath.accVec (rowF fl tab (wL L).val (2 * t1.val) (2 * k.val)) (offF fl (wL L).val (2 * t1.val) (2 * k.val)) 2 7 := by
        unfold pair0_region.sl.v1907; rw [aA2_6]
        exact acc_step d L fl tab (wL L).val (2 * t1.val) (2 * k.val) 0 _ hRA ⟨6, by decide⟩ ⟨2, by decide⟩ 32#32 rfl _ hwA_6 _ (k1_off15_form ⟨0, by decide⟩ _ _) _ _
      have aA2_8 : pair0_region.sl.v1943 d L tab k r g1 g2 hR hin = AccMath.accVec (rowF fl tab (wL L).val (2 * t1.val) (2 * k.val)) (offF fl (wL L).val (2 * t1.val) (2 * k.val)) 2 8 := by
        unfold pair0_region.sl.v1943; rw [aA2_7]
        exact acc_step d L fl tab (wL L).val (2 * t1.val) (2 * k.val) 0 _ hRA ⟨7, by decide⟩ ⟨2, by decide⟩ 32#32 rfl _ hwA_7 _ (k1_off16_form ⟨0, by decide⟩ _ _) _ _
      have aA2_9 : pair0_region.sl.v1979 d L tab k r g1 g2 hR hin = AccMath.accVec (rowF fl tab (wL L).val (2 * t1.val) (2 * k.val)) (offF fl (wL L).val (2 * t1.val) (2 * k.val)) 2 9 := by
        unfold pair0_region.sl.v1979; rw [aA2_8]
        exact acc_step d L fl tab (wL L).val (2 * t1.val) (2 * k.val) 0 _ hRA ⟨8, by decide⟩ ⟨2, by decide⟩ 32#32 rfl _ hwA_8 _ (k1_off17_form ⟨0, by decide⟩ _ _) _ _
      have aA2_10 : pair0_region.sl.v2015 d L tab k r g1 g2 hR hin = AccMath.accVec (rowF fl tab (wL L).val (2 * t1.val) (2 * k.val)) (offF fl (wL L).val (2 * t1.val) (2 * k.val)) 2 10 := by
        unfold pair0_region.sl.v2015; rw [aA2_9]
        exact acc_step d L fl tab (wL L).val (2 * t1.val) (2 * k.val) 0 _ hRA ⟨9, by decide⟩ ⟨2, by decide⟩ 32#32 rfl _ hwA_9 _ (k1_off18_form ⟨0, by decide⟩ _ _) _ _
      have aA2_11 : pair0_region.sl.v2051 d L tab k r g1 g2 hR hin = AccMath.accVec (rowF fl tab (wL L).val (2 * t1.val) (2 * k.val)) (offF fl (wL L).val (2 * t1.val) (2 * k.val)) 2 11 := by
        unfold pair0_region.sl.v2051; rw [aA2_10]
        exact acc_step d L fl tab (wL L).val (2 * t1.val) (2 * k.val) 0 _ hRA ⟨10, by decide⟩ ⟨2, by decide⟩ 32#32 rfl _ hwA_10 _ (k1_off19_form ⟨0, by decide⟩ _ _) _ _
      have aA2_12 : pair0_region.sl.v2087 d L tab k r g1 g2 hR hin = AccMath.accVec (rowF fl tab (wL L).val (2 * t1.val) (2 * k.val)) (offF fl (wL L).val (2 * t1.val) (2 * k.val)) 2 12 := by
        unfold pair0_region.sl.v2087; rw [aA2_11]
        exact acc_step d L fl tab (wL L).val (2 * t1.val) (2 * k.val) 0 _ hRA ⟨11, by decide⟩ ⟨2, by decide⟩ 32#32 rfl _ hwA_11 _ (k1_off20_form ⟨0, by decide⟩ _ _) _ _
      have aA2_13 : pair0_region.sl.v2123 d L tab k r g1 g2 hR hin = AccMath.accVec (rowF fl tab (wL L).val (2 * t1.val) (2 * k.val)) (offF fl (wL L).val (2 * t1.val) (2 * k.val)) 2 13 := by
        unfold pair0_region.sl.v2123; rw [aA2_12]
        exact acc_step d L fl tab (wL L).val (2 * t1.val) (2 * k.val) 0 _ hRA ⟨12, by decide⟩ ⟨2, by decide⟩ 32#32 rfl _ hwA_12 _ (k1_off21_form ⟨0, by decide⟩ _ _) _ _
      have aA2_14 : pair0_region.sl.v2159 d L tab k r g1 g2 hR hin = AccMath.accVec (rowF fl tab (wL L).val (2 * t1.val) (2 * k.val)) (offF fl (wL L).val (2 * t1.val) (2 * k.val)) 2 14 := by
        unfold pair0_region.sl.v2159; rw [aA2_13]
        exact acc_step d L fl tab (wL L).val (2 * t1.val) (2 * k.val) 0 _ hRA ⟨13, by decide⟩ ⟨2, by decide⟩ 32#32 rfl _ hwA_13 _ (k1_off22_form ⟨0, by decide⟩ _ _) _ _
      have aA2_15 : pair0_region.sl.v2195 d L tab k r g1 g2 hR hin = AccMath.accVec (rowF fl tab (wL L).val (2 * t1.val) (2 * k.val)) (offF fl (wL L).val (2 * t1.val) (2 * k.val)) 2 15 := by
        unfold pair0_region.sl.v2195; rw [aA2_14]
        exact acc_step d L fl tab (wL L).val (2 * t1.val) (2 * k.val) 0 _ hRA ⟨14, by decide⟩ ⟨2, by decide⟩ 32#32 rfl _ hwA_14 _ (k1_off23_form ⟨0, by decide⟩ _ _) _ _
      have aA2_16 : pair0_region.sl.v2231 d L tab k r g1 g2 hR hin = AccMath.accVec (rowF fl tab (wL L).val (2 * t1.val) (2 * k.val)) (offF fl (wL L).val (2 * t1.val) (2 * k.val)) 2 16 := by
        unfold pair0_region.sl.v2231; rw [aA2_15]
        exact acc_step d L fl tab (wL L).val (2 * t1.val) (2 * k.val) 0 _ hRA ⟨15, by decide⟩ ⟨2, by decide⟩ 32#32 rfl _ hwA_15 _ (k1_off24_form ⟨0, by decide⟩ _ _) _ _
      have aA2_17 : pair0_region.sl.v1691_1 d L tab k r g1 g2 hR hin = AccMath.accVec (rowF fl tab (wL L).val (2 * t1.val) (2 * k.val)) (offF fl (wL L).val (2 * t1.val) (2 * k.val)) 2 17 := by
        unfold pair0_region.sl.v1691_1; rw [aA2_16]
        exact acc_step d L fl tab (wL L).val (2 * t1.val) (2 * k.val) 0 _ hRA ⟨16, by decide⟩ ⟨2, by decide⟩ 32#32 rfl _ hwA_16 _ (k1_off9_form ⟨1, by decide⟩ _ _) _ _
      have aA2_18 : pair0_region.sl.v1727_1 d L tab k r g1 g2 hR hin = AccMath.accVec (rowF fl tab (wL L).val (2 * t1.val) (2 * k.val)) (offF fl (wL L).val (2 * t1.val) (2 * k.val)) 2 18 := by
        unfold pair0_region.sl.v1727_1; rw [aA2_17]
        exact acc_step d L fl tab (wL L).val (2 * t1.val) (2 * k.val) 0 _ hRA ⟨17, by decide⟩ ⟨2, by decide⟩ 32#32 rfl _ hwA_17 _ (k1_off10_form ⟨1, by decide⟩ _ _) _ _
      have aA2_19 : pair0_region.sl.v1763_1 d L tab k r g1 g2 hR hin = AccMath.accVec (rowF fl tab (wL L).val (2 * t1.val) (2 * k.val)) (offF fl (wL L).val (2 * t1.val) (2 * k.val)) 2 19 := by
        unfold pair0_region.sl.v1763_1; rw [aA2_18]
        exact acc_step d L fl tab (wL L).val (2 * t1.val) (2 * k.val) 0 _ hRA ⟨18, by decide⟩ ⟨2, by decide⟩ 32#32 rfl _ hwA_18 _ (k1_off11_form ⟨1, by decide⟩ _ _) _ _
      have aA2_20 : pair0_region.sl.v1799_1 d L tab k r g1 g2 hR hin = AccMath.accVec (rowF fl tab (wL L).val (2 * t1.val) (2 * k.val)) (offF fl (wL L).val (2 * t1.val) (2 * k.val)) 2 20 := by
        unfold pair0_region.sl.v1799_1; rw [aA2_19]
        exact acc_step d L fl tab (wL L).val (2 * t1.val) (2 * k.val) 0 _ hRA ⟨19, by decide⟩ ⟨2, by decide⟩ 32#32 rfl _ hwA_19 _ (k1_off12_form ⟨1, by decide⟩ _ _) _ _
      have aA2_21 : pair0_region.sl.v1835_1 d L tab k r g1 g2 hR hin = AccMath.accVec (rowF fl tab (wL L).val (2 * t1.val) (2 * k.val)) (offF fl (wL L).val (2 * t1.val) (2 * k.val)) 2 21 := by
        unfold pair0_region.sl.v1835_1; rw [aA2_20]
        exact acc_step d L fl tab (wL L).val (2 * t1.val) (2 * k.val) 0 _ hRA ⟨20, by decide⟩ ⟨2, by decide⟩ 32#32 rfl _ hwA_20 _ (k1_off13_form ⟨1, by decide⟩ _ _) _ _
      have aA2_22 : pair0_region.sl.v1871_1 d L tab k r g1 g2 hR hin = AccMath.accVec (rowF fl tab (wL L).val (2 * t1.val) (2 * k.val)) (offF fl (wL L).val (2 * t1.val) (2 * k.val)) 2 22 := by
        unfold pair0_region.sl.v1871_1; rw [aA2_21]
        exact acc_step d L fl tab (wL L).val (2 * t1.val) (2 * k.val) 0 _ hRA ⟨21, by decide⟩ ⟨2, by decide⟩ 32#32 rfl _ hwA_21 _ (k1_off14_form ⟨1, by decide⟩ _ _) _ _
      have aA2_23 : pair0_region.sl.v1907_1 d L tab k r g1 g2 hR hin = AccMath.accVec (rowF fl tab (wL L).val (2 * t1.val) (2 * k.val)) (offF fl (wL L).val (2 * t1.val) (2 * k.val)) 2 23 := by
        unfold pair0_region.sl.v1907_1; rw [aA2_22]
        exact acc_step d L fl tab (wL L).val (2 * t1.val) (2 * k.val) 0 _ hRA ⟨22, by decide⟩ ⟨2, by decide⟩ 32#32 rfl _ hwA_22 _ (k1_off15_form ⟨1, by decide⟩ _ _) _ _
      have aA2_24 : pair0_region.sl.v1943_1 d L tab k r g1 g2 hR hin = AccMath.accVec (rowF fl tab (wL L).val (2 * t1.val) (2 * k.val)) (offF fl (wL L).val (2 * t1.val) (2 * k.val)) 2 24 := by
        unfold pair0_region.sl.v1943_1; rw [aA2_23]
        exact acc_step d L fl tab (wL L).val (2 * t1.val) (2 * k.val) 0 _ hRA ⟨23, by decide⟩ ⟨2, by decide⟩ 32#32 rfl _ hwA_23 _ (k1_off16_form ⟨1, by decide⟩ _ _) _ _
      have aA2_25 : pair0_region.sl.v1979_1 d L tab k r g1 g2 hR hin = AccMath.accVec (rowF fl tab (wL L).val (2 * t1.val) (2 * k.val)) (offF fl (wL L).val (2 * t1.val) (2 * k.val)) 2 25 := by
        unfold pair0_region.sl.v1979_1; rw [aA2_24]
        exact acc_step d L fl tab (wL L).val (2 * t1.val) (2 * k.val) 0 _ hRA ⟨24, by decide⟩ ⟨2, by decide⟩ 32#32 rfl _ hwA_24 _ (k1_off17_form ⟨1, by decide⟩ _ _) _ _
      have aA2_26 : pair0_region.sl.v2015_1 d L tab k r g1 g2 hR hin = AccMath.accVec (rowF fl tab (wL L).val (2 * t1.val) (2 * k.val)) (offF fl (wL L).val (2 * t1.val) (2 * k.val)) 2 26 := by
        unfold pair0_region.sl.v2015_1; rw [aA2_25]
        exact acc_step d L fl tab (wL L).val (2 * t1.val) (2 * k.val) 0 _ hRA ⟨25, by decide⟩ ⟨2, by decide⟩ 32#32 rfl _ hwA_25 _ (k1_off18_form ⟨1, by decide⟩ _ _) _ _
      have aA2_27 : pair0_region.sl.v2051_1 d L tab k r g1 g2 hR hin = AccMath.accVec (rowF fl tab (wL L).val (2 * t1.val) (2 * k.val)) (offF fl (wL L).val (2 * t1.val) (2 * k.val)) 2 27 := by
        unfold pair0_region.sl.v2051_1; rw [aA2_26]
        exact acc_step d L fl tab (wL L).val (2 * t1.val) (2 * k.val) 0 _ hRA ⟨26, by decide⟩ ⟨2, by decide⟩ 32#32 rfl _ hwA_26 _ (k1_off19_form ⟨1, by decide⟩ _ _) _ _
      have aA2_28 : pair0_region.sl.v2087_1 d L tab k r g1 g2 hR hin = AccMath.accVec (rowF fl tab (wL L).val (2 * t1.val) (2 * k.val)) (offF fl (wL L).val (2 * t1.val) (2 * k.val)) 2 28 := by
        unfold pair0_region.sl.v2087_1; rw [aA2_27]
        exact acc_step d L fl tab (wL L).val (2 * t1.val) (2 * k.val) 0 _ hRA ⟨27, by decide⟩ ⟨2, by decide⟩ 32#32 rfl _ hwA_27 _ (k1_off20_form ⟨1, by decide⟩ _ _) _ _
      have aA2_29 : pair0_region.sl.v2123_1 d L tab k r g1 g2 hR hin = AccMath.accVec (rowF fl tab (wL L).val (2 * t1.val) (2 * k.val)) (offF fl (wL L).val (2 * t1.val) (2 * k.val)) 2 29 := by
        unfold pair0_region.sl.v2123_1; rw [aA2_28]
        exact acc_step d L fl tab (wL L).val (2 * t1.val) (2 * k.val) 0 _ hRA ⟨28, by decide⟩ ⟨2, by decide⟩ 32#32 rfl _ hwA_28 _ (k1_off21_form ⟨1, by decide⟩ _ _) _ _
      have aA2_30 : pair0_region.sl.v2159_1 d L tab k r g1 g2 hR hin = AccMath.accVec (rowF fl tab (wL L).val (2 * t1.val) (2 * k.val)) (offF fl (wL L).val (2 * t1.val) (2 * k.val)) 2 30 := by
        unfold pair0_region.sl.v2159_1; rw [aA2_29]
        exact acc_step d L fl tab (wL L).val (2 * t1.val) (2 * k.val) 0 _ hRA ⟨29, by decide⟩ ⟨2, by decide⟩ 32#32 rfl _ hwA_29 _ (k1_off22_form ⟨1, by decide⟩ _ _) _ _
      have aA2_31 : pair0_region.sl.v2195_1 d L tab k r g1 g2 hR hin = AccMath.accVec (rowF fl tab (wL L).val (2 * t1.val) (2 * k.val)) (offF fl (wL L).val (2 * t1.val) (2 * k.val)) 2 31 := by
        unfold pair0_region.sl.v2195_1; rw [aA2_30]
        exact acc_step d L fl tab (wL L).val (2 * t1.val) (2 * k.val) 0 _ hRA ⟨30, by decide⟩ ⟨2, by decide⟩ 32#32 rfl _ hwA_30 _ (k1_off23_form ⟨1, by decide⟩ _ _) _ _
      have aA2_32 : pair0_region.sl.v2231_1 d L tab k r g1 g2 hR hin = AccMath.accVec (rowF fl tab (wL L).val (2 * t1.val) (2 * k.val)) (offF fl (wL L).val (2 * t1.val) (2 * k.val)) 2 32 := by
        unfold pair0_region.sl.v2231_1; rw [aA2_31]
        exact acc_step d L fl tab (wL L).val (2 * t1.val) (2 * k.val) 0 _ hRA ⟨31, by decide⟩ ⟨2, by decide⟩ 32#32 rfl _ hwA_31 _ (k1_off24_form ⟨1, by decide⟩ _ _) _ _
      have aA2_33 : pair0_region.sl.v1691_2 d L tab k r g1 g2 hR hin = AccMath.accVec (rowF fl tab (wL L).val (2 * t1.val) (2 * k.val)) (offF fl (wL L).val (2 * t1.val) (2 * k.val)) 2 33 := by
        unfold pair0_region.sl.v1691_2; rw [aA2_32]
        exact acc_step d L fl tab (wL L).val (2 * t1.val) (2 * k.val) 0 _ hRA ⟨32, by decide⟩ ⟨2, by decide⟩ 32#32 rfl _ hwA_32 _ (k1_off9_form ⟨2, by decide⟩ _ _) _ _
      have aA2_34 : pair0_region.sl.v1727_2 d L tab k r g1 g2 hR hin = AccMath.accVec (rowF fl tab (wL L).val (2 * t1.val) (2 * k.val)) (offF fl (wL L).val (2 * t1.val) (2 * k.val)) 2 34 := by
        unfold pair0_region.sl.v1727_2; rw [aA2_33]
        exact acc_step d L fl tab (wL L).val (2 * t1.val) (2 * k.val) 0 _ hRA ⟨33, by decide⟩ ⟨2, by decide⟩ 32#32 rfl _ hwA_33 _ (k1_off10_form ⟨2, by decide⟩ _ _) _ _
      have aA2_35 : pair0_region.sl.v1763_2 d L tab k r g1 g2 hR hin = AccMath.accVec (rowF fl tab (wL L).val (2 * t1.val) (2 * k.val)) (offF fl (wL L).val (2 * t1.val) (2 * k.val)) 2 35 := by
        unfold pair0_region.sl.v1763_2; rw [aA2_34]
        exact acc_step d L fl tab (wL L).val (2 * t1.val) (2 * k.val) 0 _ hRA ⟨34, by decide⟩ ⟨2, by decide⟩ 32#32 rfl _ hwA_34 _ (k1_off11_form ⟨2, by decide⟩ _ _) _ _
      have aA2_36 : pair0_region.sl.v1799_2 d L tab k r g1 g2 hR hin = AccMath.accVec (rowF fl tab (wL L).val (2 * t1.val) (2 * k.val)) (offF fl (wL L).val (2 * t1.val) (2 * k.val)) 2 36 := by
        unfold pair0_region.sl.v1799_2; rw [aA2_35]
        exact acc_step d L fl tab (wL L).val (2 * t1.val) (2 * k.val) 0 _ hRA ⟨35, by decide⟩ ⟨2, by decide⟩ 32#32 rfl _ hwA_35 _ (k1_off12_form ⟨2, by decide⟩ _ _) _ _
      have aA2_37 : pair0_region.sl.v1835_2 d L tab k r g1 g2 hR hin = AccMath.accVec (rowF fl tab (wL L).val (2 * t1.val) (2 * k.val)) (offF fl (wL L).val (2 * t1.val) (2 * k.val)) 2 37 := by
        unfold pair0_region.sl.v1835_2; rw [aA2_36]
        exact acc_step d L fl tab (wL L).val (2 * t1.val) (2 * k.val) 0 _ hRA ⟨36, by decide⟩ ⟨2, by decide⟩ 32#32 rfl _ hwA_36 _ (k1_off13_form ⟨2, by decide⟩ _ _) _ _
      have aA2_38 : pair0_region.sl.v1871_2 d L tab k r g1 g2 hR hin = AccMath.accVec (rowF fl tab (wL L).val (2 * t1.val) (2 * k.val)) (offF fl (wL L).val (2 * t1.val) (2 * k.val)) 2 38 := by
        unfold pair0_region.sl.v1871_2; rw [aA2_37]
        exact acc_step d L fl tab (wL L).val (2 * t1.val) (2 * k.val) 0 _ hRA ⟨37, by decide⟩ ⟨2, by decide⟩ 32#32 rfl _ hwA_37 _ (k1_off14_form ⟨2, by decide⟩ _ _) _ _
      have aA2_39 : pair0_region.sl.v1907_2 d L tab k r g1 g2 hR hin = AccMath.accVec (rowF fl tab (wL L).val (2 * t1.val) (2 * k.val)) (offF fl (wL L).val (2 * t1.val) (2 * k.val)) 2 39 := by
        unfold pair0_region.sl.v1907_2; rw [aA2_38]
        exact acc_step d L fl tab (wL L).val (2 * t1.val) (2 * k.val) 0 _ hRA ⟨38, by decide⟩ ⟨2, by decide⟩ 32#32 rfl _ hwA_38 _ (k1_off15_form ⟨2, by decide⟩ _ _) _ _
      have aA2_40 : pair0_region.sl.v1943_2 d L tab k r g1 g2 hR hin = AccMath.accVec (rowF fl tab (wL L).val (2 * t1.val) (2 * k.val)) (offF fl (wL L).val (2 * t1.val) (2 * k.val)) 2 40 := by
        unfold pair0_region.sl.v1943_2; rw [aA2_39]
        exact acc_step d L fl tab (wL L).val (2 * t1.val) (2 * k.val) 0 _ hRA ⟨39, by decide⟩ ⟨2, by decide⟩ 32#32 rfl _ hwA_39 _ (k1_off16_form ⟨2, by decide⟩ _ _) _ _
      have aA2_41 : pair0_region.sl.v1979_2 d L tab k r g1 g2 hR hin = AccMath.accVec (rowF fl tab (wL L).val (2 * t1.val) (2 * k.val)) (offF fl (wL L).val (2 * t1.val) (2 * k.val)) 2 41 := by
        unfold pair0_region.sl.v1979_2; rw [aA2_40]
        exact acc_step d L fl tab (wL L).val (2 * t1.val) (2 * k.val) 0 _ hRA ⟨40, by decide⟩ ⟨2, by decide⟩ 32#32 rfl _ hwA_40 _ (k1_off17_form ⟨2, by decide⟩ _ _) _ _
      have aA2_42 : pair0_region.sl.v2015_2 d L tab k r g1 g2 hR hin = AccMath.accVec (rowF fl tab (wL L).val (2 * t1.val) (2 * k.val)) (offF fl (wL L).val (2 * t1.val) (2 * k.val)) 2 42 := by
        unfold pair0_region.sl.v2015_2; rw [aA2_41]
        exact acc_step d L fl tab (wL L).val (2 * t1.val) (2 * k.val) 0 _ hRA ⟨41, by decide⟩ ⟨2, by decide⟩ 32#32 rfl _ hwA_41 _ (k1_off18_form ⟨2, by decide⟩ _ _) _ _
      have aA2_43 : pair0_region.sl.v2051_2 d L tab k r g1 g2 hR hin = AccMath.accVec (rowF fl tab (wL L).val (2 * t1.val) (2 * k.val)) (offF fl (wL L).val (2 * t1.val) (2 * k.val)) 2 43 := by
        unfold pair0_region.sl.v2051_2; rw [aA2_42]
        exact acc_step d L fl tab (wL L).val (2 * t1.val) (2 * k.val) 0 _ hRA ⟨42, by decide⟩ ⟨2, by decide⟩ 32#32 rfl _ hwA_42 _ (k1_off19_form ⟨2, by decide⟩ _ _) _ _
      have aA2_44 : pair0_region.sl.v2087_2 d L tab k r g1 g2 hR hin = AccMath.accVec (rowF fl tab (wL L).val (2 * t1.val) (2 * k.val)) (offF fl (wL L).val (2 * t1.val) (2 * k.val)) 2 44 := by
        unfold pair0_region.sl.v2087_2; rw [aA2_43]
        exact acc_step d L fl tab (wL L).val (2 * t1.val) (2 * k.val) 0 _ hRA ⟨43, by decide⟩ ⟨2, by decide⟩ 32#32 rfl _ hwA_43 _ (k1_off20_form ⟨2, by decide⟩ _ _) _ _
      have aA2_45 : pair0_region.sl.v2123_2 d L tab k r g1 g2 hR hin = AccMath.accVec (rowF fl tab (wL L).val (2 * t1.val) (2 * k.val)) (offF fl (wL L).val (2 * t1.val) (2 * k.val)) 2 45 := by
        unfold pair0_region.sl.v2123_2; rw [aA2_44]
        exact acc_step d L fl tab (wL L).val (2 * t1.val) (2 * k.val) 0 _ hRA ⟨44, by decide⟩ ⟨2, by decide⟩ 32#32 rfl _ hwA_44 _ (k1_off21_form ⟨2, by decide⟩ _ _) _ _
      have aA2_46 : pair0_region.sl.v2159_2 d L tab k r g1 g2 hR hin = AccMath.accVec (rowF fl tab (wL L).val (2 * t1.val) (2 * k.val)) (offF fl (wL L).val (2 * t1.val) (2 * k.val)) 2 46 := by
        unfold pair0_region.sl.v2159_2; rw [aA2_45]
        exact acc_step d L fl tab (wL L).val (2 * t1.val) (2 * k.val) 0 _ hRA ⟨45, by decide⟩ ⟨2, by decide⟩ 32#32 rfl _ hwA_45 _ (k1_off22_form ⟨2, by decide⟩ _ _) _ _
      have aA2_47 : pair0_region.sl.v2195_2 d L tab k r g1 g2 hR hin = AccMath.accVec (rowF fl tab (wL L).val (2 * t1.val) (2 * k.val)) (offF fl (wL L).val (2 * t1.val) (2 * k.val)) 2 47 := by
        unfold pair0_region.sl.v2195_2; rw [aA2_46]
        exact acc_step d L fl tab (wL L).val (2 * t1.val) (2 * k.val) 0 _ hRA ⟨46, by decide⟩ ⟨2, by decide⟩ 32#32 rfl _ hwA_46 _ (k1_off23_form ⟨2, by decide⟩ _ _) _ _
      have aA2_48 : pair0_region.sl.v2231_2 d L tab k r g1 g2 hR hin = AccMath.accVec (rowF fl tab (wL L).val (2 * t1.val) (2 * k.val)) (offF fl (wL L).val (2 * t1.val) (2 * k.val)) 2 48 := by
        unfold pair0_region.sl.v2231_2; rw [aA2_47]
        exact acc_step d L fl tab (wL L).val (2 * t1.val) (2 * k.val) 0 _ hRA ⟨47, by decide⟩ ⟨2, by decide⟩ 32#32 rfl _ hwA_47 _ (k1_off24_form ⟨2, by decide⟩ _ _) _ _
      have aA2_49 : pair0_region.sl.v1480 d L tab k r g1 g2 hR hin = AccMath.accVec (rowF fl tab (wL L).val (2 * t1.val) (2 * k.val)) (offF fl (wL L).val (2 * t1.val) (2 * k.val)) 2 49 := by
        unfold pair0_region.sl.v1480; rw [aA2_48]
        exact acc_step d L fl tab (wL L).val (2 * t1.val) (2 * k.val) 0 _ hRA ⟨48, by decide⟩ ⟨2, by decide⟩ 32#32 rfl _ hwA_48 _ (k1_off26_form _ _) _ _
      have aA2_50 : pair0_region.sl.v1514 d L tab k r g1 g2 hR hin = AccMath.accVec (rowF fl tab (wL L).val (2 * t1.val) (2 * k.val)) (offF fl (wL L).val (2 * t1.val) (2 * k.val)) 2 50 := by
        unfold pair0_region.sl.v1514; rw [aA2_49]
        exact acc_step d L fl tab (wL L).val (2 * t1.val) (2 * k.val) 0 _ hRA ⟨49, by decide⟩ ⟨2, by decide⟩ 32#32 rfl _ hwA_49 _ (k1_off27_form _ _) _ _
      have hPA2 : ∀ x : S1x1x16.Idx, pair0_region.sl.v1537 d L tab k r g1 g2 hR hin x = Spec.bagPartial fl tab (128 * (wL L).val + 16 * (2 * t1.val) + (2 * k.val)) (16 * 2 + (x 2).val) 50 := fun x => by
        unfold pair0_region.sl.v1537; rw [aA2_50]; exact payload_ok fl tab (wL L).val (2 * t1.val) (2 * k.val) ⟨2, by decide⟩ _ x
      have aA3_0 : pair0_region.sl.v1445 = AccMath.accVec (rowF fl tab (wL L).val (2 * t1.val) (2 * k.val)) (offF fl (wL L).val (2 * t1.val) (2 * k.val)) 3 0 := acc_zero fl tab (wL L).val (2 * t1.val) (2 * k.val) 3
      have aA3_1 : pair0_region.sl.v1699 d L tab k r g1 g2 hR hin = AccMath.accVec (rowF fl tab (wL L).val (2 * t1.val) (2 * k.val)) (offF fl (wL L).val (2 * t1.val) (2 * k.val)) 3 1 := by
        unfold pair0_region.sl.v1699; rw [aA3_0]
        exact acc_step d L fl tab (wL L).val (2 * t1.val) (2 * k.val) 0 _ hRA ⟨0, by decide⟩ ⟨3, by decide⟩ 48#32 rfl _ hwA_0 _ (k1_off9_form ⟨0, by decide⟩ _ _) _ _
      have aA3_2 : pair0_region.sl.v1735 d L tab k r g1 g2 hR hin = AccMath.accVec (rowF fl tab (wL L).val (2 * t1.val) (2 * k.val)) (offF fl (wL L).val (2 * t1.val) (2 * k.val)) 3 2 := by
        unfold pair0_region.sl.v1735; rw [aA3_1]
        exact acc_step d L fl tab (wL L).val (2 * t1.val) (2 * k.val) 0 _ hRA ⟨1, by decide⟩ ⟨3, by decide⟩ 48#32 rfl _ hwA_1 _ (k1_off10_form ⟨0, by decide⟩ _ _) _ _
      have aA3_3 : pair0_region.sl.v1771 d L tab k r g1 g2 hR hin = AccMath.accVec (rowF fl tab (wL L).val (2 * t1.val) (2 * k.val)) (offF fl (wL L).val (2 * t1.val) (2 * k.val)) 3 3 := by
        unfold pair0_region.sl.v1771; rw [aA3_2]
        exact acc_step d L fl tab (wL L).val (2 * t1.val) (2 * k.val) 0 _ hRA ⟨2, by decide⟩ ⟨3, by decide⟩ 48#32 rfl _ hwA_2 _ (k1_off11_form ⟨0, by decide⟩ _ _) _ _
      have aA3_4 : pair0_region.sl.v1807 d L tab k r g1 g2 hR hin = AccMath.accVec (rowF fl tab (wL L).val (2 * t1.val) (2 * k.val)) (offF fl (wL L).val (2 * t1.val) (2 * k.val)) 3 4 := by
        unfold pair0_region.sl.v1807; rw [aA3_3]
        exact acc_step d L fl tab (wL L).val (2 * t1.val) (2 * k.val) 0 _ hRA ⟨3, by decide⟩ ⟨3, by decide⟩ 48#32 rfl _ hwA_3 _ (k1_off12_form ⟨0, by decide⟩ _ _) _ _
      have aA3_5 : pair0_region.sl.v1843 d L tab k r g1 g2 hR hin = AccMath.accVec (rowF fl tab (wL L).val (2 * t1.val) (2 * k.val)) (offF fl (wL L).val (2 * t1.val) (2 * k.val)) 3 5 := by
        unfold pair0_region.sl.v1843; rw [aA3_4]
        exact acc_step d L fl tab (wL L).val (2 * t1.val) (2 * k.val) 0 _ hRA ⟨4, by decide⟩ ⟨3, by decide⟩ 48#32 rfl _ hwA_4 _ (k1_off13_form ⟨0, by decide⟩ _ _) _ _
      have aA3_6 : pair0_region.sl.v1879 d L tab k r g1 g2 hR hin = AccMath.accVec (rowF fl tab (wL L).val (2 * t1.val) (2 * k.val)) (offF fl (wL L).val (2 * t1.val) (2 * k.val)) 3 6 := by
        unfold pair0_region.sl.v1879; rw [aA3_5]
        exact acc_step d L fl tab (wL L).val (2 * t1.val) (2 * k.val) 0 _ hRA ⟨5, by decide⟩ ⟨3, by decide⟩ 48#32 rfl _ hwA_5 _ (k1_off14_form ⟨0, by decide⟩ _ _) _ _
      have aA3_7 : pair0_region.sl.v1915 d L tab k r g1 g2 hR hin = AccMath.accVec (rowF fl tab (wL L).val (2 * t1.val) (2 * k.val)) (offF fl (wL L).val (2 * t1.val) (2 * k.val)) 3 7 := by
        unfold pair0_region.sl.v1915; rw [aA3_6]
        exact acc_step d L fl tab (wL L).val (2 * t1.val) (2 * k.val) 0 _ hRA ⟨6, by decide⟩ ⟨3, by decide⟩ 48#32 rfl _ hwA_6 _ (k1_off15_form ⟨0, by decide⟩ _ _) _ _
      have aA3_8 : pair0_region.sl.v1951 d L tab k r g1 g2 hR hin = AccMath.accVec (rowF fl tab (wL L).val (2 * t1.val) (2 * k.val)) (offF fl (wL L).val (2 * t1.val) (2 * k.val)) 3 8 := by
        unfold pair0_region.sl.v1951; rw [aA3_7]
        exact acc_step d L fl tab (wL L).val (2 * t1.val) (2 * k.val) 0 _ hRA ⟨7, by decide⟩ ⟨3, by decide⟩ 48#32 rfl _ hwA_7 _ (k1_off16_form ⟨0, by decide⟩ _ _) _ _
      have aA3_9 : pair0_region.sl.v1987 d L tab k r g1 g2 hR hin = AccMath.accVec (rowF fl tab (wL L).val (2 * t1.val) (2 * k.val)) (offF fl (wL L).val (2 * t1.val) (2 * k.val)) 3 9 := by
        unfold pair0_region.sl.v1987; rw [aA3_8]
        exact acc_step d L fl tab (wL L).val (2 * t1.val) (2 * k.val) 0 _ hRA ⟨8, by decide⟩ ⟨3, by decide⟩ 48#32 rfl _ hwA_8 _ (k1_off17_form ⟨0, by decide⟩ _ _) _ _
      have aA3_10 : pair0_region.sl.v2023 d L tab k r g1 g2 hR hin = AccMath.accVec (rowF fl tab (wL L).val (2 * t1.val) (2 * k.val)) (offF fl (wL L).val (2 * t1.val) (2 * k.val)) 3 10 := by
        unfold pair0_region.sl.v2023; rw [aA3_9]
        exact acc_step d L fl tab (wL L).val (2 * t1.val) (2 * k.val) 0 _ hRA ⟨9, by decide⟩ ⟨3, by decide⟩ 48#32 rfl _ hwA_9 _ (k1_off18_form ⟨0, by decide⟩ _ _) _ _
      have aA3_11 : pair0_region.sl.v2059 d L tab k r g1 g2 hR hin = AccMath.accVec (rowF fl tab (wL L).val (2 * t1.val) (2 * k.val)) (offF fl (wL L).val (2 * t1.val) (2 * k.val)) 3 11 := by
        unfold pair0_region.sl.v2059; rw [aA3_10]
        exact acc_step d L fl tab (wL L).val (2 * t1.val) (2 * k.val) 0 _ hRA ⟨10, by decide⟩ ⟨3, by decide⟩ 48#32 rfl _ hwA_10 _ (k1_off19_form ⟨0, by decide⟩ _ _) _ _
      have aA3_12 : pair0_region.sl.v2095 d L tab k r g1 g2 hR hin = AccMath.accVec (rowF fl tab (wL L).val (2 * t1.val) (2 * k.val)) (offF fl (wL L).val (2 * t1.val) (2 * k.val)) 3 12 := by
        unfold pair0_region.sl.v2095; rw [aA3_11]
        exact acc_step d L fl tab (wL L).val (2 * t1.val) (2 * k.val) 0 _ hRA ⟨11, by decide⟩ ⟨3, by decide⟩ 48#32 rfl _ hwA_11 _ (k1_off20_form ⟨0, by decide⟩ _ _) _ _
      have aA3_13 : pair0_region.sl.v2131 d L tab k r g1 g2 hR hin = AccMath.accVec (rowF fl tab (wL L).val (2 * t1.val) (2 * k.val)) (offF fl (wL L).val (2 * t1.val) (2 * k.val)) 3 13 := by
        unfold pair0_region.sl.v2131; rw [aA3_12]
        exact acc_step d L fl tab (wL L).val (2 * t1.val) (2 * k.val) 0 _ hRA ⟨12, by decide⟩ ⟨3, by decide⟩ 48#32 rfl _ hwA_12 _ (k1_off21_form ⟨0, by decide⟩ _ _) _ _
      have aA3_14 : pair0_region.sl.v2167 d L tab k r g1 g2 hR hin = AccMath.accVec (rowF fl tab (wL L).val (2 * t1.val) (2 * k.val)) (offF fl (wL L).val (2 * t1.val) (2 * k.val)) 3 14 := by
        unfold pair0_region.sl.v2167; rw [aA3_13]
        exact acc_step d L fl tab (wL L).val (2 * t1.val) (2 * k.val) 0 _ hRA ⟨13, by decide⟩ ⟨3, by decide⟩ 48#32 rfl _ hwA_13 _ (k1_off22_form ⟨0, by decide⟩ _ _) _ _
      have aA3_15 : pair0_region.sl.v2203 d L tab k r g1 g2 hR hin = AccMath.accVec (rowF fl tab (wL L).val (2 * t1.val) (2 * k.val)) (offF fl (wL L).val (2 * t1.val) (2 * k.val)) 3 15 := by
        unfold pair0_region.sl.v2203; rw [aA3_14]
        exact acc_step d L fl tab (wL L).val (2 * t1.val) (2 * k.val) 0 _ hRA ⟨14, by decide⟩ ⟨3, by decide⟩ 48#32 rfl _ hwA_14 _ (k1_off23_form ⟨0, by decide⟩ _ _) _ _
      have aA3_16 : pair0_region.sl.v2239 d L tab k r g1 g2 hR hin = AccMath.accVec (rowF fl tab (wL L).val (2 * t1.val) (2 * k.val)) (offF fl (wL L).val (2 * t1.val) (2 * k.val)) 3 16 := by
        unfold pair0_region.sl.v2239; rw [aA3_15]
        exact acc_step d L fl tab (wL L).val (2 * t1.val) (2 * k.val) 0 _ hRA ⟨15, by decide⟩ ⟨3, by decide⟩ 48#32 rfl _ hwA_15 _ (k1_off24_form ⟨0, by decide⟩ _ _) _ _
      have aA3_17 : pair0_region.sl.v1699_1 d L tab k r g1 g2 hR hin = AccMath.accVec (rowF fl tab (wL L).val (2 * t1.val) (2 * k.val)) (offF fl (wL L).val (2 * t1.val) (2 * k.val)) 3 17 := by
        unfold pair0_region.sl.v1699_1; rw [aA3_16]
        exact acc_step d L fl tab (wL L).val (2 * t1.val) (2 * k.val) 0 _ hRA ⟨16, by decide⟩ ⟨3, by decide⟩ 48#32 rfl _ hwA_16 _ (k1_off9_form ⟨1, by decide⟩ _ _) _ _
      have aA3_18 : pair0_region.sl.v1735_1 d L tab k r g1 g2 hR hin = AccMath.accVec (rowF fl tab (wL L).val (2 * t1.val) (2 * k.val)) (offF fl (wL L).val (2 * t1.val) (2 * k.val)) 3 18 := by
        unfold pair0_region.sl.v1735_1; rw [aA3_17]
        exact acc_step d L fl tab (wL L).val (2 * t1.val) (2 * k.val) 0 _ hRA ⟨17, by decide⟩ ⟨3, by decide⟩ 48#32 rfl _ hwA_17 _ (k1_off10_form ⟨1, by decide⟩ _ _) _ _
      have aA3_19 : pair0_region.sl.v1771_1 d L tab k r g1 g2 hR hin = AccMath.accVec (rowF fl tab (wL L).val (2 * t1.val) (2 * k.val)) (offF fl (wL L).val (2 * t1.val) (2 * k.val)) 3 19 := by
        unfold pair0_region.sl.v1771_1; rw [aA3_18]
        exact acc_step d L fl tab (wL L).val (2 * t1.val) (2 * k.val) 0 _ hRA ⟨18, by decide⟩ ⟨3, by decide⟩ 48#32 rfl _ hwA_18 _ (k1_off11_form ⟨1, by decide⟩ _ _) _ _
      have aA3_20 : pair0_region.sl.v1807_1 d L tab k r g1 g2 hR hin = AccMath.accVec (rowF fl tab (wL L).val (2 * t1.val) (2 * k.val)) (offF fl (wL L).val (2 * t1.val) (2 * k.val)) 3 20 := by
        unfold pair0_region.sl.v1807_1; rw [aA3_19]
        exact acc_step d L fl tab (wL L).val (2 * t1.val) (2 * k.val) 0 _ hRA ⟨19, by decide⟩ ⟨3, by decide⟩ 48#32 rfl _ hwA_19 _ (k1_off12_form ⟨1, by decide⟩ _ _) _ _
      have aA3_21 : pair0_region.sl.v1843_1 d L tab k r g1 g2 hR hin = AccMath.accVec (rowF fl tab (wL L).val (2 * t1.val) (2 * k.val)) (offF fl (wL L).val (2 * t1.val) (2 * k.val)) 3 21 := by
        unfold pair0_region.sl.v1843_1; rw [aA3_20]
        exact acc_step d L fl tab (wL L).val (2 * t1.val) (2 * k.val) 0 _ hRA ⟨20, by decide⟩ ⟨3, by decide⟩ 48#32 rfl _ hwA_20 _ (k1_off13_form ⟨1, by decide⟩ _ _) _ _
      have aA3_22 : pair0_region.sl.v1879_1 d L tab k r g1 g2 hR hin = AccMath.accVec (rowF fl tab (wL L).val (2 * t1.val) (2 * k.val)) (offF fl (wL L).val (2 * t1.val) (2 * k.val)) 3 22 := by
        unfold pair0_region.sl.v1879_1; rw [aA3_21]
        exact acc_step d L fl tab (wL L).val (2 * t1.val) (2 * k.val) 0 _ hRA ⟨21, by decide⟩ ⟨3, by decide⟩ 48#32 rfl _ hwA_21 _ (k1_off14_form ⟨1, by decide⟩ _ _) _ _
      have aA3_23 : pair0_region.sl.v1915_1 d L tab k r g1 g2 hR hin = AccMath.accVec (rowF fl tab (wL L).val (2 * t1.val) (2 * k.val)) (offF fl (wL L).val (2 * t1.val) (2 * k.val)) 3 23 := by
        unfold pair0_region.sl.v1915_1; rw [aA3_22]
        exact acc_step d L fl tab (wL L).val (2 * t1.val) (2 * k.val) 0 _ hRA ⟨22, by decide⟩ ⟨3, by decide⟩ 48#32 rfl _ hwA_22 _ (k1_off15_form ⟨1, by decide⟩ _ _) _ _
      have aA3_24 : pair0_region.sl.v1951_1 d L tab k r g1 g2 hR hin = AccMath.accVec (rowF fl tab (wL L).val (2 * t1.val) (2 * k.val)) (offF fl (wL L).val (2 * t1.val) (2 * k.val)) 3 24 := by
        unfold pair0_region.sl.v1951_1; rw [aA3_23]
        exact acc_step d L fl tab (wL L).val (2 * t1.val) (2 * k.val) 0 _ hRA ⟨23, by decide⟩ ⟨3, by decide⟩ 48#32 rfl _ hwA_23 _ (k1_off16_form ⟨1, by decide⟩ _ _) _ _
      have aA3_25 : pair0_region.sl.v1987_1 d L tab k r g1 g2 hR hin = AccMath.accVec (rowF fl tab (wL L).val (2 * t1.val) (2 * k.val)) (offF fl (wL L).val (2 * t1.val) (2 * k.val)) 3 25 := by
        unfold pair0_region.sl.v1987_1; rw [aA3_24]
        exact acc_step d L fl tab (wL L).val (2 * t1.val) (2 * k.val) 0 _ hRA ⟨24, by decide⟩ ⟨3, by decide⟩ 48#32 rfl _ hwA_24 _ (k1_off17_form ⟨1, by decide⟩ _ _) _ _
      have aA3_26 : pair0_region.sl.v2023_1 d L tab k r g1 g2 hR hin = AccMath.accVec (rowF fl tab (wL L).val (2 * t1.val) (2 * k.val)) (offF fl (wL L).val (2 * t1.val) (2 * k.val)) 3 26 := by
        unfold pair0_region.sl.v2023_1; rw [aA3_25]
        exact acc_step d L fl tab (wL L).val (2 * t1.val) (2 * k.val) 0 _ hRA ⟨25, by decide⟩ ⟨3, by decide⟩ 48#32 rfl _ hwA_25 _ (k1_off18_form ⟨1, by decide⟩ _ _) _ _
      have aA3_27 : pair0_region.sl.v2059_1 d L tab k r g1 g2 hR hin = AccMath.accVec (rowF fl tab (wL L).val (2 * t1.val) (2 * k.val)) (offF fl (wL L).val (2 * t1.val) (2 * k.val)) 3 27 := by
        unfold pair0_region.sl.v2059_1; rw [aA3_26]
        exact acc_step d L fl tab (wL L).val (2 * t1.val) (2 * k.val) 0 _ hRA ⟨26, by decide⟩ ⟨3, by decide⟩ 48#32 rfl _ hwA_26 _ (k1_off19_form ⟨1, by decide⟩ _ _) _ _
      have aA3_28 : pair0_region.sl.v2095_1 d L tab k r g1 g2 hR hin = AccMath.accVec (rowF fl tab (wL L).val (2 * t1.val) (2 * k.val)) (offF fl (wL L).val (2 * t1.val) (2 * k.val)) 3 28 := by
        unfold pair0_region.sl.v2095_1; rw [aA3_27]
        exact acc_step d L fl tab (wL L).val (2 * t1.val) (2 * k.val) 0 _ hRA ⟨27, by decide⟩ ⟨3, by decide⟩ 48#32 rfl _ hwA_27 _ (k1_off20_form ⟨1, by decide⟩ _ _) _ _
      have aA3_29 : pair0_region.sl.v2131_1 d L tab k r g1 g2 hR hin = AccMath.accVec (rowF fl tab (wL L).val (2 * t1.val) (2 * k.val)) (offF fl (wL L).val (2 * t1.val) (2 * k.val)) 3 29 := by
        unfold pair0_region.sl.v2131_1; rw [aA3_28]
        exact acc_step d L fl tab (wL L).val (2 * t1.val) (2 * k.val) 0 _ hRA ⟨28, by decide⟩ ⟨3, by decide⟩ 48#32 rfl _ hwA_28 _ (k1_off21_form ⟨1, by decide⟩ _ _) _ _
      have aA3_30 : pair0_region.sl.v2167_1 d L tab k r g1 g2 hR hin = AccMath.accVec (rowF fl tab (wL L).val (2 * t1.val) (2 * k.val)) (offF fl (wL L).val (2 * t1.val) (2 * k.val)) 3 30 := by
        unfold pair0_region.sl.v2167_1; rw [aA3_29]
        exact acc_step d L fl tab (wL L).val (2 * t1.val) (2 * k.val) 0 _ hRA ⟨29, by decide⟩ ⟨3, by decide⟩ 48#32 rfl _ hwA_29 _ (k1_off22_form ⟨1, by decide⟩ _ _) _ _
      have aA3_31 : pair0_region.sl.v2203_1 d L tab k r g1 g2 hR hin = AccMath.accVec (rowF fl tab (wL L).val (2 * t1.val) (2 * k.val)) (offF fl (wL L).val (2 * t1.val) (2 * k.val)) 3 31 := by
        unfold pair0_region.sl.v2203_1; rw [aA3_30]
        exact acc_step d L fl tab (wL L).val (2 * t1.val) (2 * k.val) 0 _ hRA ⟨30, by decide⟩ ⟨3, by decide⟩ 48#32 rfl _ hwA_30 _ (k1_off23_form ⟨1, by decide⟩ _ _) _ _
      have aA3_32 : pair0_region.sl.v2239_1 d L tab k r g1 g2 hR hin = AccMath.accVec (rowF fl tab (wL L).val (2 * t1.val) (2 * k.val)) (offF fl (wL L).val (2 * t1.val) (2 * k.val)) 3 32 := by
        unfold pair0_region.sl.v2239_1; rw [aA3_31]
        exact acc_step d L fl tab (wL L).val (2 * t1.val) (2 * k.val) 0 _ hRA ⟨31, by decide⟩ ⟨3, by decide⟩ 48#32 rfl _ hwA_31 _ (k1_off24_form ⟨1, by decide⟩ _ _) _ _
      have aA3_33 : pair0_region.sl.v1699_2 d L tab k r g1 g2 hR hin = AccMath.accVec (rowF fl tab (wL L).val (2 * t1.val) (2 * k.val)) (offF fl (wL L).val (2 * t1.val) (2 * k.val)) 3 33 := by
        unfold pair0_region.sl.v1699_2; rw [aA3_32]
        exact acc_step d L fl tab (wL L).val (2 * t1.val) (2 * k.val) 0 _ hRA ⟨32, by decide⟩ ⟨3, by decide⟩ 48#32 rfl _ hwA_32 _ (k1_off9_form ⟨2, by decide⟩ _ _) _ _
      have aA3_34 : pair0_region.sl.v1735_2 d L tab k r g1 g2 hR hin = AccMath.accVec (rowF fl tab (wL L).val (2 * t1.val) (2 * k.val)) (offF fl (wL L).val (2 * t1.val) (2 * k.val)) 3 34 := by
        unfold pair0_region.sl.v1735_2; rw [aA3_33]
        exact acc_step d L fl tab (wL L).val (2 * t1.val) (2 * k.val) 0 _ hRA ⟨33, by decide⟩ ⟨3, by decide⟩ 48#32 rfl _ hwA_33 _ (k1_off10_form ⟨2, by decide⟩ _ _) _ _
      have aA3_35 : pair0_region.sl.v1771_2 d L tab k r g1 g2 hR hin = AccMath.accVec (rowF fl tab (wL L).val (2 * t1.val) (2 * k.val)) (offF fl (wL L).val (2 * t1.val) (2 * k.val)) 3 35 := by
        unfold pair0_region.sl.v1771_2; rw [aA3_34]
        exact acc_step d L fl tab (wL L).val (2 * t1.val) (2 * k.val) 0 _ hRA ⟨34, by decide⟩ ⟨3, by decide⟩ 48#32 rfl _ hwA_34 _ (k1_off11_form ⟨2, by decide⟩ _ _) _ _
      have aA3_36 : pair0_region.sl.v1807_2 d L tab k r g1 g2 hR hin = AccMath.accVec (rowF fl tab (wL L).val (2 * t1.val) (2 * k.val)) (offF fl (wL L).val (2 * t1.val) (2 * k.val)) 3 36 := by
        unfold pair0_region.sl.v1807_2; rw [aA3_35]
        exact acc_step d L fl tab (wL L).val (2 * t1.val) (2 * k.val) 0 _ hRA ⟨35, by decide⟩ ⟨3, by decide⟩ 48#32 rfl _ hwA_35 _ (k1_off12_form ⟨2, by decide⟩ _ _) _ _
      have aA3_37 : pair0_region.sl.v1843_2 d L tab k r g1 g2 hR hin = AccMath.accVec (rowF fl tab (wL L).val (2 * t1.val) (2 * k.val)) (offF fl (wL L).val (2 * t1.val) (2 * k.val)) 3 37 := by
        unfold pair0_region.sl.v1843_2; rw [aA3_36]
        exact acc_step d L fl tab (wL L).val (2 * t1.val) (2 * k.val) 0 _ hRA ⟨36, by decide⟩ ⟨3, by decide⟩ 48#32 rfl _ hwA_36 _ (k1_off13_form ⟨2, by decide⟩ _ _) _ _
      have aA3_38 : pair0_region.sl.v1879_2 d L tab k r g1 g2 hR hin = AccMath.accVec (rowF fl tab (wL L).val (2 * t1.val) (2 * k.val)) (offF fl (wL L).val (2 * t1.val) (2 * k.val)) 3 38 := by
        unfold pair0_region.sl.v1879_2; rw [aA3_37]
        exact acc_step d L fl tab (wL L).val (2 * t1.val) (2 * k.val) 0 _ hRA ⟨37, by decide⟩ ⟨3, by decide⟩ 48#32 rfl _ hwA_37 _ (k1_off14_form ⟨2, by decide⟩ _ _) _ _
      have aA3_39 : pair0_region.sl.v1915_2 d L tab k r g1 g2 hR hin = AccMath.accVec (rowF fl tab (wL L).val (2 * t1.val) (2 * k.val)) (offF fl (wL L).val (2 * t1.val) (2 * k.val)) 3 39 := by
        unfold pair0_region.sl.v1915_2; rw [aA3_38]
        exact acc_step d L fl tab (wL L).val (2 * t1.val) (2 * k.val) 0 _ hRA ⟨38, by decide⟩ ⟨3, by decide⟩ 48#32 rfl _ hwA_38 _ (k1_off15_form ⟨2, by decide⟩ _ _) _ _
      have aA3_40 : pair0_region.sl.v1951_2 d L tab k r g1 g2 hR hin = AccMath.accVec (rowF fl tab (wL L).val (2 * t1.val) (2 * k.val)) (offF fl (wL L).val (2 * t1.val) (2 * k.val)) 3 40 := by
        unfold pair0_region.sl.v1951_2; rw [aA3_39]
        exact acc_step d L fl tab (wL L).val (2 * t1.val) (2 * k.val) 0 _ hRA ⟨39, by decide⟩ ⟨3, by decide⟩ 48#32 rfl _ hwA_39 _ (k1_off16_form ⟨2, by decide⟩ _ _) _ _
      have aA3_41 : pair0_region.sl.v1987_2 d L tab k r g1 g2 hR hin = AccMath.accVec (rowF fl tab (wL L).val (2 * t1.val) (2 * k.val)) (offF fl (wL L).val (2 * t1.val) (2 * k.val)) 3 41 := by
        unfold pair0_region.sl.v1987_2; rw [aA3_40]
        exact acc_step d L fl tab (wL L).val (2 * t1.val) (2 * k.val) 0 _ hRA ⟨40, by decide⟩ ⟨3, by decide⟩ 48#32 rfl _ hwA_40 _ (k1_off17_form ⟨2, by decide⟩ _ _) _ _
      have aA3_42 : pair0_region.sl.v2023_2 d L tab k r g1 g2 hR hin = AccMath.accVec (rowF fl tab (wL L).val (2 * t1.val) (2 * k.val)) (offF fl (wL L).val (2 * t1.val) (2 * k.val)) 3 42 := by
        unfold pair0_region.sl.v2023_2; rw [aA3_41]
        exact acc_step d L fl tab (wL L).val (2 * t1.val) (2 * k.val) 0 _ hRA ⟨41, by decide⟩ ⟨3, by decide⟩ 48#32 rfl _ hwA_41 _ (k1_off18_form ⟨2, by decide⟩ _ _) _ _
      have aA3_43 : pair0_region.sl.v2059_2 d L tab k r g1 g2 hR hin = AccMath.accVec (rowF fl tab (wL L).val (2 * t1.val) (2 * k.val)) (offF fl (wL L).val (2 * t1.val) (2 * k.val)) 3 43 := by
        unfold pair0_region.sl.v2059_2; rw [aA3_42]
        exact acc_step d L fl tab (wL L).val (2 * t1.val) (2 * k.val) 0 _ hRA ⟨42, by decide⟩ ⟨3, by decide⟩ 48#32 rfl _ hwA_42 _ (k1_off19_form ⟨2, by decide⟩ _ _) _ _
      have aA3_44 : pair0_region.sl.v2095_2 d L tab k r g1 g2 hR hin = AccMath.accVec (rowF fl tab (wL L).val (2 * t1.val) (2 * k.val)) (offF fl (wL L).val (2 * t1.val) (2 * k.val)) 3 44 := by
        unfold pair0_region.sl.v2095_2; rw [aA3_43]
        exact acc_step d L fl tab (wL L).val (2 * t1.val) (2 * k.val) 0 _ hRA ⟨43, by decide⟩ ⟨3, by decide⟩ 48#32 rfl _ hwA_43 _ (k1_off20_form ⟨2, by decide⟩ _ _) _ _
      have aA3_45 : pair0_region.sl.v2131_2 d L tab k r g1 g2 hR hin = AccMath.accVec (rowF fl tab (wL L).val (2 * t1.val) (2 * k.val)) (offF fl (wL L).val (2 * t1.val) (2 * k.val)) 3 45 := by
        unfold pair0_region.sl.v2131_2; rw [aA3_44]
        exact acc_step d L fl tab (wL L).val (2 * t1.val) (2 * k.val) 0 _ hRA ⟨44, by decide⟩ ⟨3, by decide⟩ 48#32 rfl _ hwA_44 _ (k1_off21_form ⟨2, by decide⟩ _ _) _ _
      have aA3_46 : pair0_region.sl.v2167_2 d L tab k r g1 g2 hR hin = AccMath.accVec (rowF fl tab (wL L).val (2 * t1.val) (2 * k.val)) (offF fl (wL L).val (2 * t1.val) (2 * k.val)) 3 46 := by
        unfold pair0_region.sl.v2167_2; rw [aA3_45]
        exact acc_step d L fl tab (wL L).val (2 * t1.val) (2 * k.val) 0 _ hRA ⟨45, by decide⟩ ⟨3, by decide⟩ 48#32 rfl _ hwA_45 _ (k1_off22_form ⟨2, by decide⟩ _ _) _ _
      have aA3_47 : pair0_region.sl.v2203_2 d L tab k r g1 g2 hR hin = AccMath.accVec (rowF fl tab (wL L).val (2 * t1.val) (2 * k.val)) (offF fl (wL L).val (2 * t1.val) (2 * k.val)) 3 47 := by
        unfold pair0_region.sl.v2203_2; rw [aA3_46]
        exact acc_step d L fl tab (wL L).val (2 * t1.val) (2 * k.val) 0 _ hRA ⟨46, by decide⟩ ⟨3, by decide⟩ 48#32 rfl _ hwA_46 _ (k1_off23_form ⟨2, by decide⟩ _ _) _ _
      have aA3_48 : pair0_region.sl.v2239_2 d L tab k r g1 g2 hR hin = AccMath.accVec (rowF fl tab (wL L).val (2 * t1.val) (2 * k.val)) (offF fl (wL L).val (2 * t1.val) (2 * k.val)) 3 48 := by
        unfold pair0_region.sl.v2239_2; rw [aA3_47]
        exact acc_step d L fl tab (wL L).val (2 * t1.val) (2 * k.val) 0 _ hRA ⟨47, by decide⟩ ⟨3, by decide⟩ 48#32 rfl _ hwA_47 _ (k1_off24_form ⟨2, by decide⟩ _ _) _ _
      have aA3_49 : pair0_region.sl.v1488 d L tab k r g1 g2 hR hin = AccMath.accVec (rowF fl tab (wL L).val (2 * t1.val) (2 * k.val)) (offF fl (wL L).val (2 * t1.val) (2 * k.val)) 3 49 := by
        unfold pair0_region.sl.v1488; rw [aA3_48]
        exact acc_step d L fl tab (wL L).val (2 * t1.val) (2 * k.val) 0 _ hRA ⟨48, by decide⟩ ⟨3, by decide⟩ 48#32 rfl _ hwA_48 _ (k1_off26_form _ _) _ _
      have aA3_50 : pair0_region.sl.v1522 d L tab k r g1 g2 hR hin = AccMath.accVec (rowF fl tab (wL L).val (2 * t1.val) (2 * k.val)) (offF fl (wL L).val (2 * t1.val) (2 * k.val)) 3 50 := by
        unfold pair0_region.sl.v1522; rw [aA3_49]
        exact acc_step d L fl tab (wL L).val (2 * t1.val) (2 * k.val) 0 _ hRA ⟨49, by decide⟩ ⟨3, by decide⟩ 48#32 rfl _ hwA_49 _ (k1_off27_form _ _) _ _
      have hPA3 : ∀ x : S1x1x16.Idx, pair0_region.sl.v1542 d L tab k r g1 g2 hR hin x = Spec.bagPartial fl tab (128 * (wL L).val + 16 * (2 * t1.val) + (2 * k.val)) (16 * 3 + (x 2).val) 50 := fun x => by
        unfold pair0_region.sl.v1542; rw [aA3_50]; exact payload_ok fl tab (wL L).val (2 * t1.val) (2 * k.val) ⟨3, by decide⟩ _ x
      have hwB_0 : pair0_region.sl.v1667_3 d L k g2 = Spec.tcol (blkWord fl (wL L).val (2 * t1.val) (64 * (2 * k.val + 1) + 0)) :=
        (rv_extract d L g2 _ _ _ 0 (by decide) _ _).trans (rv_word d L fl (wL L).val (2 * t1.val) 0 (2 * k.val + 1) 0 (by decide) (by omega) (by decide) g2 hV0 _
          (by rw [k1_off35_eq k ⟨0, by decide⟩]; show 128 * k.val + 16 * 0 + 64 + 0 = 1024 * 0 + 64 * (2 * k.val + 1) + 0; omega) _)
      have hwB_1 : pair0_region.sl.v1703_3 d L k g2 = Spec.tcol (blkWord fl (wL L).val (2 * t1.val) (64 * (2 * k.val + 1) + 1)) :=
        (rv_extract d L g2 _ _ _ 1 (by decide) _ _).trans (rv_word d L fl (wL L).val (2 * t1.val) 0 (2 * k.val + 1) 1 (by decide) (by omega) (by decide) g2 hV0 _
          (by rw [k1_off35_eq k ⟨0, by decide⟩]; show 128 * k.val + 16 * 0 + 64 + 1 = 1024 * 0 + 64 * (2 * k.val + 1) + 1; omega) _)
      have hwB_2 : pair0_region.sl.v1739_3 d L k g2 = Spec.tcol (blkWord fl (wL L).val (2 * t1.val) (64 * (2 * k.val + 1) + 2)) :=
        (rv_extract d L g2 _ _ _ 2 (by decide) _ _).trans (rv_word d L fl (wL L).val (2 * t1.val) 0 (2 * k.val + 1) 2 (by decide) (by omega) (by decide) g2 hV0 _
          (by rw [k1_off35_eq k ⟨0, by decide⟩]; show 128 * k.val + 16 * 0 + 64 + 2 = 1024 * 0 + 64 * (2 * k.val + 1) + 2; omega) _)
      have hwB_3 : pair0_region.sl.v1775_3 d L k g2 = Spec.tcol (blkWord fl (wL L).val (2 * t1.val) (64 * (2 * k.val + 1) + 3)) :=
        (rv_extract d L g2 _ _ _ 3 (by decide) _ _).trans (rv_word d L fl (wL L).val (2 * t1.val) 0 (2 * k.val + 1) 3 (by decide) (by omega) (by decide) g2 hV0 _
          (by rw [k1_off35_eq k ⟨0, by decide⟩]; show 128 * k.val + 16 * 0 + 64 + 3 = 1024 * 0 + 64 * (2 * k.val + 1) + 3; omega) _)
      have hwB_4 : pair0_region.sl.v1811_3 d L k g2 = Spec.tcol (blkWord fl (wL L).val (2 * t1.val) (64 * (2 * k.val + 1) + 4)) :=
        (rv_extract d L g2 _ _ _ 4 (by decide) _ _).trans (rv_word d L fl (wL L).val (2 * t1.val) 0 (2 * k.val + 1) 4 (by decide) (by omega) (by decide) g2 hV0 _
          (by rw [k1_off35_eq k ⟨0, by decide⟩]; show 128 * k.val + 16 * 0 + 64 + 4 = 1024 * 0 + 64 * (2 * k.val + 1) + 4; omega) _)
      have hwB_5 : pair0_region.sl.v1847_3 d L k g2 = Spec.tcol (blkWord fl (wL L).val (2 * t1.val) (64 * (2 * k.val + 1) + 5)) :=
        (rv_extract d L g2 _ _ _ 5 (by decide) _ _).trans (rv_word d L fl (wL L).val (2 * t1.val) 0 (2 * k.val + 1) 5 (by decide) (by omega) (by decide) g2 hV0 _
          (by rw [k1_off35_eq k ⟨0, by decide⟩]; show 128 * k.val + 16 * 0 + 64 + 5 = 1024 * 0 + 64 * (2 * k.val + 1) + 5; omega) _)
      have hwB_6 : pair0_region.sl.v1883_3 d L k g2 = Spec.tcol (blkWord fl (wL L).val (2 * t1.val) (64 * (2 * k.val + 1) + 6)) :=
        (rv_extract d L g2 _ _ _ 6 (by decide) _ _).trans (rv_word d L fl (wL L).val (2 * t1.val) 0 (2 * k.val + 1) 6 (by decide) (by omega) (by decide) g2 hV0 _
          (by rw [k1_off35_eq k ⟨0, by decide⟩]; show 128 * k.val + 16 * 0 + 64 + 6 = 1024 * 0 + 64 * (2 * k.val + 1) + 6; omega) _)
      have hwB_7 : pair0_region.sl.v1919_3 d L k g2 = Spec.tcol (blkWord fl (wL L).val (2 * t1.val) (64 * (2 * k.val + 1) + 7)) :=
        (rv_extract d L g2 _ _ _ 7 (by decide) _ _).trans (rv_word d L fl (wL L).val (2 * t1.val) 0 (2 * k.val + 1) 7 (by decide) (by omega) (by decide) g2 hV0 _
          (by rw [k1_off35_eq k ⟨0, by decide⟩]; show 128 * k.val + 16 * 0 + 64 + 7 = 1024 * 0 + 64 * (2 * k.val + 1) + 7; omega) _)
      have hwB_8 : pair0_region.sl.v1955_3 d L k g2 = Spec.tcol (blkWord fl (wL L).val (2 * t1.val) (64 * (2 * k.val + 1) + 8)) :=
        (rv_extract d L g2 _ _ _ 8 (by decide) _ _).trans (rv_word d L fl (wL L).val (2 * t1.val) 0 (2 * k.val + 1) 8 (by decide) (by omega) (by decide) g2 hV0 _
          (by rw [k1_off35_eq k ⟨0, by decide⟩]; show 128 * k.val + 16 * 0 + 64 + 8 = 1024 * 0 + 64 * (2 * k.val + 1) + 8; omega) _)
      have hwB_9 : pair0_region.sl.v1991_3 d L k g2 = Spec.tcol (blkWord fl (wL L).val (2 * t1.val) (64 * (2 * k.val + 1) + 9)) :=
        (rv_extract d L g2 _ _ _ 9 (by decide) _ _).trans (rv_word d L fl (wL L).val (2 * t1.val) 0 (2 * k.val + 1) 9 (by decide) (by omega) (by decide) g2 hV0 _
          (by rw [k1_off35_eq k ⟨0, by decide⟩]; show 128 * k.val + 16 * 0 + 64 + 9 = 1024 * 0 + 64 * (2 * k.val + 1) + 9; omega) _)
      have hwB_10 : pair0_region.sl.v2027_3 d L k g2 = Spec.tcol (blkWord fl (wL L).val (2 * t1.val) (64 * (2 * k.val + 1) + 10)) :=
        (rv_extract d L g2 _ _ _ 10 (by decide) _ _).trans (rv_word d L fl (wL L).val (2 * t1.val) 0 (2 * k.val + 1) 10 (by decide) (by omega) (by decide) g2 hV0 _
          (by rw [k1_off35_eq k ⟨0, by decide⟩]; show 128 * k.val + 16 * 0 + 64 + 10 = 1024 * 0 + 64 * (2 * k.val + 1) + 10; omega) _)
      have hwB_11 : pair0_region.sl.v2063_3 d L k g2 = Spec.tcol (blkWord fl (wL L).val (2 * t1.val) (64 * (2 * k.val + 1) + 11)) :=
        (rv_extract d L g2 _ _ _ 11 (by decide) _ _).trans (rv_word d L fl (wL L).val (2 * t1.val) 0 (2 * k.val + 1) 11 (by decide) (by omega) (by decide) g2 hV0 _
          (by rw [k1_off35_eq k ⟨0, by decide⟩]; show 128 * k.val + 16 * 0 + 64 + 11 = 1024 * 0 + 64 * (2 * k.val + 1) + 11; omega) _)
      have hwB_12 : pair0_region.sl.v2099_3 d L k g2 = Spec.tcol (blkWord fl (wL L).val (2 * t1.val) (64 * (2 * k.val + 1) + 12)) :=
        (rv_extract d L g2 _ _ _ 12 (by decide) _ _).trans (rv_word d L fl (wL L).val (2 * t1.val) 0 (2 * k.val + 1) 12 (by decide) (by omega) (by decide) g2 hV0 _
          (by rw [k1_off35_eq k ⟨0, by decide⟩]; show 128 * k.val + 16 * 0 + 64 + 12 = 1024 * 0 + 64 * (2 * k.val + 1) + 12; omega) _)
      have hwB_13 : pair0_region.sl.v2135_3 d L k g2 = Spec.tcol (blkWord fl (wL L).val (2 * t1.val) (64 * (2 * k.val + 1) + 13)) :=
        (rv_extract d L g2 _ _ _ 13 (by decide) _ _).trans (rv_word d L fl (wL L).val (2 * t1.val) 0 (2 * k.val + 1) 13 (by decide) (by omega) (by decide) g2 hV0 _
          (by rw [k1_off35_eq k ⟨0, by decide⟩]; show 128 * k.val + 16 * 0 + 64 + 13 = 1024 * 0 + 64 * (2 * k.val + 1) + 13; omega) _)
      have hwB_14 : pair0_region.sl.v2171_3 d L k g2 = Spec.tcol (blkWord fl (wL L).val (2 * t1.val) (64 * (2 * k.val + 1) + 14)) :=
        (rv_extract d L g2 _ _ _ 14 (by decide) _ _).trans (rv_word d L fl (wL L).val (2 * t1.val) 0 (2 * k.val + 1) 14 (by decide) (by omega) (by decide) g2 hV0 _
          (by rw [k1_off35_eq k ⟨0, by decide⟩]; show 128 * k.val + 16 * 0 + 64 + 14 = 1024 * 0 + 64 * (2 * k.val + 1) + 14; omega) _)
      have hwB_15 : pair0_region.sl.v2207_3 d L k g2 = Spec.tcol (blkWord fl (wL L).val (2 * t1.val) (64 * (2 * k.val + 1) + 15)) :=
        (rv_extract d L g2 _ _ _ 15 (by decide) _ _).trans (rv_word d L fl (wL L).val (2 * t1.val) 0 (2 * k.val + 1) 15 (by decide) (by omega) (by decide) g2 hV0 _
          (by rw [k1_off35_eq k ⟨0, by decide⟩]; show 128 * k.val + 16 * 0 + 64 + 15 = 1024 * 0 + 64 * (2 * k.val + 1) + 15; omega) _)
      have hwB_16 : pair0_region.sl.v1667_4 d L k g2 = Spec.tcol (blkWord fl (wL L).val (2 * t1.val) (64 * (2 * k.val + 1) + 16)) :=
        (rv_extract d L g2 _ _ _ 0 (by decide) _ _).trans (rv_word d L fl (wL L).val (2 * t1.val) 0 (2 * k.val + 1) 16 (by decide) (by omega) (by decide) g2 hV0 _
          (by rw [k1_off35_eq k ⟨1, by decide⟩]; show 128 * k.val + 16 * 1 + 64 + 0 = 1024 * 0 + 64 * (2 * k.val + 1) + 16; omega) _)
      have hwB_17 : pair0_region.sl.v1703_4 d L k g2 = Spec.tcol (blkWord fl (wL L).val (2 * t1.val) (64 * (2 * k.val + 1) + 17)) :=
        (rv_extract d L g2 _ _ _ 1 (by decide) _ _).trans (rv_word d L fl (wL L).val (2 * t1.val) 0 (2 * k.val + 1) 17 (by decide) (by omega) (by decide) g2 hV0 _
          (by rw [k1_off35_eq k ⟨1, by decide⟩]; show 128 * k.val + 16 * 1 + 64 + 1 = 1024 * 0 + 64 * (2 * k.val + 1) + 17; omega) _)
      have hwB_18 : pair0_region.sl.v1739_4 d L k g2 = Spec.tcol (blkWord fl (wL L).val (2 * t1.val) (64 * (2 * k.val + 1) + 18)) :=
        (rv_extract d L g2 _ _ _ 2 (by decide) _ _).trans (rv_word d L fl (wL L).val (2 * t1.val) 0 (2 * k.val + 1) 18 (by decide) (by omega) (by decide) g2 hV0 _
          (by rw [k1_off35_eq k ⟨1, by decide⟩]; show 128 * k.val + 16 * 1 + 64 + 2 = 1024 * 0 + 64 * (2 * k.val + 1) + 18; omega) _)
      have hwB_19 : pair0_region.sl.v1775_4 d L k g2 = Spec.tcol (blkWord fl (wL L).val (2 * t1.val) (64 * (2 * k.val + 1) + 19)) :=
        (rv_extract d L g2 _ _ _ 3 (by decide) _ _).trans (rv_word d L fl (wL L).val (2 * t1.val) 0 (2 * k.val + 1) 19 (by decide) (by omega) (by decide) g2 hV0 _
          (by rw [k1_off35_eq k ⟨1, by decide⟩]; show 128 * k.val + 16 * 1 + 64 + 3 = 1024 * 0 + 64 * (2 * k.val + 1) + 19; omega) _)
      have hwB_20 : pair0_region.sl.v1811_4 d L k g2 = Spec.tcol (blkWord fl (wL L).val (2 * t1.val) (64 * (2 * k.val + 1) + 20)) :=
        (rv_extract d L g2 _ _ _ 4 (by decide) _ _).trans (rv_word d L fl (wL L).val (2 * t1.val) 0 (2 * k.val + 1) 20 (by decide) (by omega) (by decide) g2 hV0 _
          (by rw [k1_off35_eq k ⟨1, by decide⟩]; show 128 * k.val + 16 * 1 + 64 + 4 = 1024 * 0 + 64 * (2 * k.val + 1) + 20; omega) _)
      have hwB_21 : pair0_region.sl.v1847_4 d L k g2 = Spec.tcol (blkWord fl (wL L).val (2 * t1.val) (64 * (2 * k.val + 1) + 21)) :=
        (rv_extract d L g2 _ _ _ 5 (by decide) _ _).trans (rv_word d L fl (wL L).val (2 * t1.val) 0 (2 * k.val + 1) 21 (by decide) (by omega) (by decide) g2 hV0 _
          (by rw [k1_off35_eq k ⟨1, by decide⟩]; show 128 * k.val + 16 * 1 + 64 + 5 = 1024 * 0 + 64 * (2 * k.val + 1) + 21; omega) _)
      have hwB_22 : pair0_region.sl.v1883_4 d L k g2 = Spec.tcol (blkWord fl (wL L).val (2 * t1.val) (64 * (2 * k.val + 1) + 22)) :=
        (rv_extract d L g2 _ _ _ 6 (by decide) _ _).trans (rv_word d L fl (wL L).val (2 * t1.val) 0 (2 * k.val + 1) 22 (by decide) (by omega) (by decide) g2 hV0 _
          (by rw [k1_off35_eq k ⟨1, by decide⟩]; show 128 * k.val + 16 * 1 + 64 + 6 = 1024 * 0 + 64 * (2 * k.val + 1) + 22; omega) _)
      have hwB_23 : pair0_region.sl.v1919_4 d L k g2 = Spec.tcol (blkWord fl (wL L).val (2 * t1.val) (64 * (2 * k.val + 1) + 23)) :=
        (rv_extract d L g2 _ _ _ 7 (by decide) _ _).trans (rv_word d L fl (wL L).val (2 * t1.val) 0 (2 * k.val + 1) 23 (by decide) (by omega) (by decide) g2 hV0 _
          (by rw [k1_off35_eq k ⟨1, by decide⟩]; show 128 * k.val + 16 * 1 + 64 + 7 = 1024 * 0 + 64 * (2 * k.val + 1) + 23; omega) _)
      have hwB_24 : pair0_region.sl.v1955_4 d L k g2 = Spec.tcol (blkWord fl (wL L).val (2 * t1.val) (64 * (2 * k.val + 1) + 24)) :=
        (rv_extract d L g2 _ _ _ 8 (by decide) _ _).trans (rv_word d L fl (wL L).val (2 * t1.val) 0 (2 * k.val + 1) 24 (by decide) (by omega) (by decide) g2 hV0 _
          (by rw [k1_off35_eq k ⟨1, by decide⟩]; show 128 * k.val + 16 * 1 + 64 + 8 = 1024 * 0 + 64 * (2 * k.val + 1) + 24; omega) _)
      have hwB_25 : pair0_region.sl.v1991_4 d L k g2 = Spec.tcol (blkWord fl (wL L).val (2 * t1.val) (64 * (2 * k.val + 1) + 25)) :=
        (rv_extract d L g2 _ _ _ 9 (by decide) _ _).trans (rv_word d L fl (wL L).val (2 * t1.val) 0 (2 * k.val + 1) 25 (by decide) (by omega) (by decide) g2 hV0 _
          (by rw [k1_off35_eq k ⟨1, by decide⟩]; show 128 * k.val + 16 * 1 + 64 + 9 = 1024 * 0 + 64 * (2 * k.val + 1) + 25; omega) _)
      have hwB_26 : pair0_region.sl.v2027_4 d L k g2 = Spec.tcol (blkWord fl (wL L).val (2 * t1.val) (64 * (2 * k.val + 1) + 26)) :=
        (rv_extract d L g2 _ _ _ 10 (by decide) _ _).trans (rv_word d L fl (wL L).val (2 * t1.val) 0 (2 * k.val + 1) 26 (by decide) (by omega) (by decide) g2 hV0 _
          (by rw [k1_off35_eq k ⟨1, by decide⟩]; show 128 * k.val + 16 * 1 + 64 + 10 = 1024 * 0 + 64 * (2 * k.val + 1) + 26; omega) _)
      have hwB_27 : pair0_region.sl.v2063_4 d L k g2 = Spec.tcol (blkWord fl (wL L).val (2 * t1.val) (64 * (2 * k.val + 1) + 27)) :=
        (rv_extract d L g2 _ _ _ 11 (by decide) _ _).trans (rv_word d L fl (wL L).val (2 * t1.val) 0 (2 * k.val + 1) 27 (by decide) (by omega) (by decide) g2 hV0 _
          (by rw [k1_off35_eq k ⟨1, by decide⟩]; show 128 * k.val + 16 * 1 + 64 + 11 = 1024 * 0 + 64 * (2 * k.val + 1) + 27; omega) _)
      have hwB_28 : pair0_region.sl.v2099_4 d L k g2 = Spec.tcol (blkWord fl (wL L).val (2 * t1.val) (64 * (2 * k.val + 1) + 28)) :=
        (rv_extract d L g2 _ _ _ 12 (by decide) _ _).trans (rv_word d L fl (wL L).val (2 * t1.val) 0 (2 * k.val + 1) 28 (by decide) (by omega) (by decide) g2 hV0 _
          (by rw [k1_off35_eq k ⟨1, by decide⟩]; show 128 * k.val + 16 * 1 + 64 + 12 = 1024 * 0 + 64 * (2 * k.val + 1) + 28; omega) _)
      have hwB_29 : pair0_region.sl.v2135_4 d L k g2 = Spec.tcol (blkWord fl (wL L).val (2 * t1.val) (64 * (2 * k.val + 1) + 29)) :=
        (rv_extract d L g2 _ _ _ 13 (by decide) _ _).trans (rv_word d L fl (wL L).val (2 * t1.val) 0 (2 * k.val + 1) 29 (by decide) (by omega) (by decide) g2 hV0 _
          (by rw [k1_off35_eq k ⟨1, by decide⟩]; show 128 * k.val + 16 * 1 + 64 + 13 = 1024 * 0 + 64 * (2 * k.val + 1) + 29; omega) _)
      have hwB_30 : pair0_region.sl.v2171_4 d L k g2 = Spec.tcol (blkWord fl (wL L).val (2 * t1.val) (64 * (2 * k.val + 1) + 30)) :=
        (rv_extract d L g2 _ _ _ 14 (by decide) _ _).trans (rv_word d L fl (wL L).val (2 * t1.val) 0 (2 * k.val + 1) 30 (by decide) (by omega) (by decide) g2 hV0 _
          (by rw [k1_off35_eq k ⟨1, by decide⟩]; show 128 * k.val + 16 * 1 + 64 + 14 = 1024 * 0 + 64 * (2 * k.val + 1) + 30; omega) _)
      have hwB_31 : pair0_region.sl.v2207_4 d L k g2 = Spec.tcol (blkWord fl (wL L).val (2 * t1.val) (64 * (2 * k.val + 1) + 31)) :=
        (rv_extract d L g2 _ _ _ 15 (by decide) _ _).trans (rv_word d L fl (wL L).val (2 * t1.val) 0 (2 * k.val + 1) 31 (by decide) (by omega) (by decide) g2 hV0 _
          (by rw [k1_off35_eq k ⟨1, by decide⟩]; show 128 * k.val + 16 * 1 + 64 + 15 = 1024 * 0 + 64 * (2 * k.val + 1) + 31; omega) _)
      have hwB_32 : pair0_region.sl.v1667_5 d L k g2 = Spec.tcol (blkWord fl (wL L).val (2 * t1.val) (64 * (2 * k.val + 1) + 32)) :=
        (rv_extract d L g2 _ _ _ 0 (by decide) _ _).trans (rv_word d L fl (wL L).val (2 * t1.val) 0 (2 * k.val + 1) 32 (by decide) (by omega) (by decide) g2 hV0 _
          (by rw [k1_off35_eq k ⟨2, by decide⟩]; show 128 * k.val + 16 * 2 + 64 + 0 = 1024 * 0 + 64 * (2 * k.val + 1) + 32; omega) _)
      have hwB_33 : pair0_region.sl.v1703_5 d L k g2 = Spec.tcol (blkWord fl (wL L).val (2 * t1.val) (64 * (2 * k.val + 1) + 33)) :=
        (rv_extract d L g2 _ _ _ 1 (by decide) _ _).trans (rv_word d L fl (wL L).val (2 * t1.val) 0 (2 * k.val + 1) 33 (by decide) (by omega) (by decide) g2 hV0 _
          (by rw [k1_off35_eq k ⟨2, by decide⟩]; show 128 * k.val + 16 * 2 + 64 + 1 = 1024 * 0 + 64 * (2 * k.val + 1) + 33; omega) _)
      have hwB_34 : pair0_region.sl.v1739_5 d L k g2 = Spec.tcol (blkWord fl (wL L).val (2 * t1.val) (64 * (2 * k.val + 1) + 34)) :=
        (rv_extract d L g2 _ _ _ 2 (by decide) _ _).trans (rv_word d L fl (wL L).val (2 * t1.val) 0 (2 * k.val + 1) 34 (by decide) (by omega) (by decide) g2 hV0 _
          (by rw [k1_off35_eq k ⟨2, by decide⟩]; show 128 * k.val + 16 * 2 + 64 + 2 = 1024 * 0 + 64 * (2 * k.val + 1) + 34; omega) _)
      have hwB_35 : pair0_region.sl.v1775_5 d L k g2 = Spec.tcol (blkWord fl (wL L).val (2 * t1.val) (64 * (2 * k.val + 1) + 35)) :=
        (rv_extract d L g2 _ _ _ 3 (by decide) _ _).trans (rv_word d L fl (wL L).val (2 * t1.val) 0 (2 * k.val + 1) 35 (by decide) (by omega) (by decide) g2 hV0 _
          (by rw [k1_off35_eq k ⟨2, by decide⟩]; show 128 * k.val + 16 * 2 + 64 + 3 = 1024 * 0 + 64 * (2 * k.val + 1) + 35; omega) _)
      have hwB_36 : pair0_region.sl.v1811_5 d L k g2 = Spec.tcol (blkWord fl (wL L).val (2 * t1.val) (64 * (2 * k.val + 1) + 36)) :=
        (rv_extract d L g2 _ _ _ 4 (by decide) _ _).trans (rv_word d L fl (wL L).val (2 * t1.val) 0 (2 * k.val + 1) 36 (by decide) (by omega) (by decide) g2 hV0 _
          (by rw [k1_off35_eq k ⟨2, by decide⟩]; show 128 * k.val + 16 * 2 + 64 + 4 = 1024 * 0 + 64 * (2 * k.val + 1) + 36; omega) _)
      have hwB_37 : pair0_region.sl.v1847_5 d L k g2 = Spec.tcol (blkWord fl (wL L).val (2 * t1.val) (64 * (2 * k.val + 1) + 37)) :=
        (rv_extract d L g2 _ _ _ 5 (by decide) _ _).trans (rv_word d L fl (wL L).val (2 * t1.val) 0 (2 * k.val + 1) 37 (by decide) (by omega) (by decide) g2 hV0 _
          (by rw [k1_off35_eq k ⟨2, by decide⟩]; show 128 * k.val + 16 * 2 + 64 + 5 = 1024 * 0 + 64 * (2 * k.val + 1) + 37; omega) _)
      have hwB_38 : pair0_region.sl.v1883_5 d L k g2 = Spec.tcol (blkWord fl (wL L).val (2 * t1.val) (64 * (2 * k.val + 1) + 38)) :=
        (rv_extract d L g2 _ _ _ 6 (by decide) _ _).trans (rv_word d L fl (wL L).val (2 * t1.val) 0 (2 * k.val + 1) 38 (by decide) (by omega) (by decide) g2 hV0 _
          (by rw [k1_off35_eq k ⟨2, by decide⟩]; show 128 * k.val + 16 * 2 + 64 + 6 = 1024 * 0 + 64 * (2 * k.val + 1) + 38; omega) _)
      have hwB_39 : pair0_region.sl.v1919_5 d L k g2 = Spec.tcol (blkWord fl (wL L).val (2 * t1.val) (64 * (2 * k.val + 1) + 39)) :=
        (rv_extract d L g2 _ _ _ 7 (by decide) _ _).trans (rv_word d L fl (wL L).val (2 * t1.val) 0 (2 * k.val + 1) 39 (by decide) (by omega) (by decide) g2 hV0 _
          (by rw [k1_off35_eq k ⟨2, by decide⟩]; show 128 * k.val + 16 * 2 + 64 + 7 = 1024 * 0 + 64 * (2 * k.val + 1) + 39; omega) _)
      have hwB_40 : pair0_region.sl.v1955_5 d L k g2 = Spec.tcol (blkWord fl (wL L).val (2 * t1.val) (64 * (2 * k.val + 1) + 40)) :=
        (rv_extract d L g2 _ _ _ 8 (by decide) _ _).trans (rv_word d L fl (wL L).val (2 * t1.val) 0 (2 * k.val + 1) 40 (by decide) (by omega) (by decide) g2 hV0 _
          (by rw [k1_off35_eq k ⟨2, by decide⟩]; show 128 * k.val + 16 * 2 + 64 + 8 = 1024 * 0 + 64 * (2 * k.val + 1) + 40; omega) _)
      have hwB_41 : pair0_region.sl.v1991_5 d L k g2 = Spec.tcol (blkWord fl (wL L).val (2 * t1.val) (64 * (2 * k.val + 1) + 41)) :=
        (rv_extract d L g2 _ _ _ 9 (by decide) _ _).trans (rv_word d L fl (wL L).val (2 * t1.val) 0 (2 * k.val + 1) 41 (by decide) (by omega) (by decide) g2 hV0 _
          (by rw [k1_off35_eq k ⟨2, by decide⟩]; show 128 * k.val + 16 * 2 + 64 + 9 = 1024 * 0 + 64 * (2 * k.val + 1) + 41; omega) _)
      have hwB_42 : pair0_region.sl.v2027_5 d L k g2 = Spec.tcol (blkWord fl (wL L).val (2 * t1.val) (64 * (2 * k.val + 1) + 42)) :=
        (rv_extract d L g2 _ _ _ 10 (by decide) _ _).trans (rv_word d L fl (wL L).val (2 * t1.val) 0 (2 * k.val + 1) 42 (by decide) (by omega) (by decide) g2 hV0 _
          (by rw [k1_off35_eq k ⟨2, by decide⟩]; show 128 * k.val + 16 * 2 + 64 + 10 = 1024 * 0 + 64 * (2 * k.val + 1) + 42; omega) _)
      have hwB_43 : pair0_region.sl.v2063_5 d L k g2 = Spec.tcol (blkWord fl (wL L).val (2 * t1.val) (64 * (2 * k.val + 1) + 43)) :=
        (rv_extract d L g2 _ _ _ 11 (by decide) _ _).trans (rv_word d L fl (wL L).val (2 * t1.val) 0 (2 * k.val + 1) 43 (by decide) (by omega) (by decide) g2 hV0 _
          (by rw [k1_off35_eq k ⟨2, by decide⟩]; show 128 * k.val + 16 * 2 + 64 + 11 = 1024 * 0 + 64 * (2 * k.val + 1) + 43; omega) _)
      have hwB_44 : pair0_region.sl.v2099_5 d L k g2 = Spec.tcol (blkWord fl (wL L).val (2 * t1.val) (64 * (2 * k.val + 1) + 44)) :=
        (rv_extract d L g2 _ _ _ 12 (by decide) _ _).trans (rv_word d L fl (wL L).val (2 * t1.val) 0 (2 * k.val + 1) 44 (by decide) (by omega) (by decide) g2 hV0 _
          (by rw [k1_off35_eq k ⟨2, by decide⟩]; show 128 * k.val + 16 * 2 + 64 + 12 = 1024 * 0 + 64 * (2 * k.val + 1) + 44; omega) _)
      have hwB_45 : pair0_region.sl.v2135_5 d L k g2 = Spec.tcol (blkWord fl (wL L).val (2 * t1.val) (64 * (2 * k.val + 1) + 45)) :=
        (rv_extract d L g2 _ _ _ 13 (by decide) _ _).trans (rv_word d L fl (wL L).val (2 * t1.val) 0 (2 * k.val + 1) 45 (by decide) (by omega) (by decide) g2 hV0 _
          (by rw [k1_off35_eq k ⟨2, by decide⟩]; show 128 * k.val + 16 * 2 + 64 + 13 = 1024 * 0 + 64 * (2 * k.val + 1) + 45; omega) _)
      have hwB_46 : pair0_region.sl.v2171_5 d L k g2 = Spec.tcol (blkWord fl (wL L).val (2 * t1.val) (64 * (2 * k.val + 1) + 46)) :=
        (rv_extract d L g2 _ _ _ 14 (by decide) _ _).trans (rv_word d L fl (wL L).val (2 * t1.val) 0 (2 * k.val + 1) 46 (by decide) (by omega) (by decide) g2 hV0 _
          (by rw [k1_off35_eq k ⟨2, by decide⟩]; show 128 * k.val + 16 * 2 + 64 + 14 = 1024 * 0 + 64 * (2 * k.val + 1) + 46; omega) _)
      have hwB_47 : pair0_region.sl.v2207_5 d L k g2 = Spec.tcol (blkWord fl (wL L).val (2 * t1.val) (64 * (2 * k.val + 1) + 47)) :=
        (rv_extract d L g2 _ _ _ 15 (by decide) _ _).trans (rv_word d L fl (wL L).val (2 * t1.val) 0 (2 * k.val + 1) 47 (by decide) (by omega) (by decide) g2 hV0 _
          (by rw [k1_off35_eq k ⟨2, by decide⟩]; show 128 * k.val + 16 * 2 + 64 + 15 = 1024 * 0 + 64 * (2 * k.val + 1) + 47; omega) _)
      have hwB_48 : pair0_region.sl.v1572 d L k g2 = Spec.tcol (blkWord fl (wL L).val (2 * t1.val) (64 * (2 * k.val + 1) + 48)) :=
        (rv_extract d L g2 _ _ _ 0 (by decide) _ _).trans (rv_word d L fl (wL L).val (2 * t1.val) 0 (2 * k.val + 1) 48 (by decide) (by omega) (by decide) g2 hV0 _
          (by rw [k1_off52_eq k]; show 128 * k.val + 112 + 0 = 1024 * 0 + 64 * (2 * k.val + 1) + 48; omega) _)
      have hwB_49 : pair0_region.sl.v1606 d L k g2 = Spec.tcol (blkWord fl (wL L).val (2 * t1.val) (64 * (2 * k.val + 1) + 49)) :=
        (rv_extract d L g2 _ _ _ 1 (by decide) _ _).trans (rv_word d L fl (wL L).val (2 * t1.val) 0 (2 * k.val + 1) 49 (by decide) (by omega) (by decide) g2 hV0 _
          (by rw [k1_off52_eq k]; show 128 * k.val + 112 + 1 = 1024 * 0 + 64 * (2 * k.val + 1) + 49; omega) _)
      have aB0_0 : pair0_region.sl.v1561 = AccMath.accVec (rowF fl tab (wL L).val (2 * t1.val) (2 * k.val + 1)) (offF fl (wL L).val (2 * t1.val) (2 * k.val + 1)) 0 0 := acc_zero fl tab (wL L).val (2 * t1.val) (2 * k.val + 1) 0
      have aB0_1 : pair0_region.sl.v1675_3 d L tab k r g1 g2 hR hin h4 = AccMath.accVec (rowF fl tab (wL L).val (2 * t1.val) (2 * k.val + 1)) (offF fl (wL L).val (2 * t1.val) (2 * k.val + 1)) 0 1 := by
        unfold pair0_region.sl.v1675_3; rw [aB0_0]
        exact acc_step d L fl tab (wL L).val (2 * t1.val) (2 * k.val + 1) 1 _ hRB ⟨0, by decide⟩ ⟨0, by decide⟩ 0#32 rfl _ hwB_0 _ (k1_off36_form ⟨0, by decide⟩ _ _) _ _
      have aB0_2 : pair0_region.sl.v1711_3 d L tab k r g1 g2 hR hin h4 = AccMath.accVec (rowF fl tab (wL L).val (2 * t1.val) (2 * k.val + 1)) (offF fl (wL L).val (2 * t1.val) (2 * k.val + 1)) 0 2 := by
        unfold pair0_region.sl.v1711_3; rw [aB0_1]
        exact acc_step d L fl tab (wL L).val (2 * t1.val) (2 * k.val + 1) 1 _ hRB ⟨1, by decide⟩ ⟨0, by decide⟩ 0#32 rfl _ hwB_1 _ (k1_off37_form ⟨0, by decide⟩ _ _) _ _
      have aB0_3 : pair0_region.sl.v1747_3 d L tab k r g1 g2 hR hin h4 = AccMath.accVec (rowF fl tab (wL L).val (2 * t1.val) (2 * k.val + 1)) (offF fl (wL L).val (2 * t1.val) (2 * k.val + 1)) 0 3 := by
        unfold pair0_region.sl.v1747_3; rw [aB0_2]
        exact acc_step d L fl tab (wL L).val (2 * t1.val) (2 * k.val + 1) 1 _ hRB ⟨2, by decide⟩ ⟨0, by decide⟩ 0#32 rfl _ hwB_2 _ (k1_off38_form ⟨0, by decide⟩ _ _) _ _
      have aB0_4 : pair0_region.sl.v1783_3 d L tab k r g1 g2 hR hin h4 = AccMath.accVec (rowF fl tab (wL L).val (2 * t1.val) (2 * k.val + 1)) (offF fl (wL L).val (2 * t1.val) (2 * k.val + 1)) 0 4 := by
        unfold pair0_region.sl.v1783_3; rw [aB0_3]
        exact acc_step d L fl tab (wL L).val (2 * t1.val) (2 * k.val + 1) 1 _ hRB ⟨3, by decide⟩ ⟨0, by decide⟩ 0#32 rfl _ hwB_3 _ (k1_off39_form ⟨0, by decide⟩ _ _) _ _
      have aB0_5 : pair0_region.sl.v1819_3 d L tab k r g1 g2 hR hin h4 = AccMath.accVec (rowF fl tab (wL L).val (2 * t1.val) (2 * k.val + 1)) (offF fl (wL L).val (2 * t1.val) (2 * k.val + 1)) 0 5 := by
        unfold pair0_region.sl.v1819_3; rw [aB0_4]
        exact acc_step d L fl tab (wL L).val (2 * t1.val) (2 * k.val + 1) 1 _ hRB ⟨4, by decide⟩ ⟨0, by decide⟩ 0#32 rfl _ hwB_4 _ (k1_off40_form ⟨0, by decide⟩ _ _) _ _
      have aB0_6 : pair0_region.sl.v1855_3 d L tab k r g1 g2 hR hin h4 = AccMath.accVec (rowF fl tab (wL L).val (2 * t1.val) (2 * k.val + 1)) (offF fl (wL L).val (2 * t1.val) (2 * k.val + 1)) 0 6 := by
        unfold pair0_region.sl.v1855_3; rw [aB0_5]
        exact acc_step d L fl tab (wL L).val (2 * t1.val) (2 * k.val + 1) 1 _ hRB ⟨5, by decide⟩ ⟨0, by decide⟩ 0#32 rfl _ hwB_5 _ (k1_off41_form ⟨0, by decide⟩ _ _) _ _
      have aB0_7 : pair0_region.sl.v1891_3 d L tab k r g1 g2 hR hin h4 = AccMath.accVec (rowF fl tab (wL L).val (2 * t1.val) (2 * k.val + 1)) (offF fl (wL L).val (2 * t1.val) (2 * k.val + 1)) 0 7 := by
        unfold pair0_region.sl.v1891_3; rw [aB0_6]
        exact acc_step d L fl tab (wL L).val (2 * t1.val) (2 * k.val + 1) 1 _ hRB ⟨6, by decide⟩ ⟨0, by decide⟩ 0#32 rfl _ hwB_6 _ (k1_off42_form ⟨0, by decide⟩ _ _) _ _
      have aB0_8 : pair0_region.sl.v1927_3 d L tab k r g1 g2 hR hin h4 = AccMath.accVec (rowF fl tab (wL L).val (2 * t1.val) (2 * k.val + 1)) (offF fl (wL L).val (2 * t1.val) (2 * k.val + 1)) 0 8 := by
        unfold pair0_region.sl.v1927_3; rw [aB0_7]
        exact acc_step d L fl tab (wL L).val (2 * t1.val) (2 * k.val + 1) 1 _ hRB ⟨7, by decide⟩ ⟨0, by decide⟩ 0#32 rfl _ hwB_7 _ (k1_off43_form ⟨0, by decide⟩ _ _) _ _
      have aB0_9 : pair0_region.sl.v1963_3 d L tab k r g1 g2 hR hin h4 = AccMath.accVec (rowF fl tab (wL L).val (2 * t1.val) (2 * k.val + 1)) (offF fl (wL L).val (2 * t1.val) (2 * k.val + 1)) 0 9 := by
        unfold pair0_region.sl.v1963_3; rw [aB0_8]
        exact acc_step d L fl tab (wL L).val (2 * t1.val) (2 * k.val + 1) 1 _ hRB ⟨8, by decide⟩ ⟨0, by decide⟩ 0#32 rfl _ hwB_8 _ (k1_off44_form ⟨0, by decide⟩ _ _) _ _
      have aB0_10 : pair0_region.sl.v1999_3 d L tab k r g1 g2 hR hin h4 = AccMath.accVec (rowF fl tab (wL L).val (2 * t1.val) (2 * k.val + 1)) (offF fl (wL L).val (2 * t1.val) (2 * k.val + 1)) 0 10 := by
        unfold pair0_region.sl.v1999_3; rw [aB0_9]
        exact acc_step d L fl tab (wL L).val (2 * t1.val) (2 * k.val + 1) 1 _ hRB ⟨9, by decide⟩ ⟨0, by decide⟩ 0#32 rfl _ hwB_9 _ (k1_off45_form ⟨0, by decide⟩ _ _) _ _
      have aB0_11 : pair0_region.sl.v2035_3 d L tab k r g1 g2 hR hin h4 = AccMath.accVec (rowF fl tab (wL L).val (2 * t1.val) (2 * k.val + 1)) (offF fl (wL L).val (2 * t1.val) (2 * k.val + 1)) 0 11 := by
        unfold pair0_region.sl.v2035_3; rw [aB0_10]
        exact acc_step d L fl tab (wL L).val (2 * t1.val) (2 * k.val + 1) 1 _ hRB ⟨10, by decide⟩ ⟨0, by decide⟩ 0#32 rfl _ hwB_10 _ (k1_off46_form ⟨0, by decide⟩ _ _) _ _
      have aB0_12 : pair0_region.sl.v2071_3 d L tab k r g1 g2 hR hin h4 = AccMath.accVec (rowF fl tab (wL L).val (2 * t1.val) (2 * k.val + 1)) (offF fl (wL L).val (2 * t1.val) (2 * k.val + 1)) 0 12 := by
        unfold pair0_region.sl.v2071_3; rw [aB0_11]
        exact acc_step d L fl tab (wL L).val (2 * t1.val) (2 * k.val + 1) 1 _ hRB ⟨11, by decide⟩ ⟨0, by decide⟩ 0#32 rfl _ hwB_11 _ (k1_off47_form ⟨0, by decide⟩ _ _) _ _
      have aB0_13 : pair0_region.sl.v2107_3 d L tab k r g1 g2 hR hin h4 = AccMath.accVec (rowF fl tab (wL L).val (2 * t1.val) (2 * k.val + 1)) (offF fl (wL L).val (2 * t1.val) (2 * k.val + 1)) 0 13 := by
        unfold pair0_region.sl.v2107_3; rw [aB0_12]
        exact acc_step d L fl tab (wL L).val (2 * t1.val) (2 * k.val + 1) 1 _ hRB ⟨12, by decide⟩ ⟨0, by decide⟩ 0#32 rfl _ hwB_12 _ (k1_off48_form ⟨0, by decide⟩ _ _) _ _
      have aB0_14 : pair0_region.sl.v2143_3 d L tab k r g1 g2 hR hin h4 = AccMath.accVec (rowF fl tab (wL L).val (2 * t1.val) (2 * k.val + 1)) (offF fl (wL L).val (2 * t1.val) (2 * k.val + 1)) 0 14 := by
        unfold pair0_region.sl.v2143_3; rw [aB0_13]
        exact acc_step d L fl tab (wL L).val (2 * t1.val) (2 * k.val + 1) 1 _ hRB ⟨13, by decide⟩ ⟨0, by decide⟩ 0#32 rfl _ hwB_13 _ (k1_off49_form ⟨0, by decide⟩ _ _) _ _
      have aB0_15 : pair0_region.sl.v2179_3 d L tab k r g1 g2 hR hin h4 = AccMath.accVec (rowF fl tab (wL L).val (2 * t1.val) (2 * k.val + 1)) (offF fl (wL L).val (2 * t1.val) (2 * k.val + 1)) 0 15 := by
        unfold pair0_region.sl.v2179_3; rw [aB0_14]
        exact acc_step d L fl tab (wL L).val (2 * t1.val) (2 * k.val + 1) 1 _ hRB ⟨14, by decide⟩ ⟨0, by decide⟩ 0#32 rfl _ hwB_14 _ (k1_off50_form ⟨0, by decide⟩ _ _) _ _
      have aB0_16 : pair0_region.sl.v2215_3 d L tab k r g1 g2 hR hin h4 = AccMath.accVec (rowF fl tab (wL L).val (2 * t1.val) (2 * k.val + 1)) (offF fl (wL L).val (2 * t1.val) (2 * k.val + 1)) 0 16 := by
        unfold pair0_region.sl.v2215_3; rw [aB0_15]
        exact acc_step d L fl tab (wL L).val (2 * t1.val) (2 * k.val + 1) 1 _ hRB ⟨15, by decide⟩ ⟨0, by decide⟩ 0#32 rfl _ hwB_15 _ (k1_off51_form ⟨0, by decide⟩ _ _) _ _
      have aB0_17 : pair0_region.sl.v1675_4 d L tab k r g1 g2 hR hin h4 = AccMath.accVec (rowF fl tab (wL L).val (2 * t1.val) (2 * k.val + 1)) (offF fl (wL L).val (2 * t1.val) (2 * k.val + 1)) 0 17 := by
        unfold pair0_region.sl.v1675_4; rw [aB0_16]
        exact acc_step d L fl tab (wL L).val (2 * t1.val) (2 * k.val + 1) 1 _ hRB ⟨16, by decide⟩ ⟨0, by decide⟩ 0#32 rfl _ hwB_16 _ (k1_off36_form ⟨1, by decide⟩ _ _) _ _
      have aB0_18 : pair0_region.sl.v1711_4 d L tab k r g1 g2 hR hin h4 = AccMath.accVec (rowF fl tab (wL L).val (2 * t1.val) (2 * k.val + 1)) (offF fl (wL L).val (2 * t1.val) (2 * k.val + 1)) 0 18 := by
        unfold pair0_region.sl.v1711_4; rw [aB0_17]
        exact acc_step d L fl tab (wL L).val (2 * t1.val) (2 * k.val + 1) 1 _ hRB ⟨17, by decide⟩ ⟨0, by decide⟩ 0#32 rfl _ hwB_17 _ (k1_off37_form ⟨1, by decide⟩ _ _) _ _
      have aB0_19 : pair0_region.sl.v1747_4 d L tab k r g1 g2 hR hin h4 = AccMath.accVec (rowF fl tab (wL L).val (2 * t1.val) (2 * k.val + 1)) (offF fl (wL L).val (2 * t1.val) (2 * k.val + 1)) 0 19 := by
        unfold pair0_region.sl.v1747_4; rw [aB0_18]
        exact acc_step d L fl tab (wL L).val (2 * t1.val) (2 * k.val + 1) 1 _ hRB ⟨18, by decide⟩ ⟨0, by decide⟩ 0#32 rfl _ hwB_18 _ (k1_off38_form ⟨1, by decide⟩ _ _) _ _
      have aB0_20 : pair0_region.sl.v1783_4 d L tab k r g1 g2 hR hin h4 = AccMath.accVec (rowF fl tab (wL L).val (2 * t1.val) (2 * k.val + 1)) (offF fl (wL L).val (2 * t1.val) (2 * k.val + 1)) 0 20 := by
        unfold pair0_region.sl.v1783_4; rw [aB0_19]
        exact acc_step d L fl tab (wL L).val (2 * t1.val) (2 * k.val + 1) 1 _ hRB ⟨19, by decide⟩ ⟨0, by decide⟩ 0#32 rfl _ hwB_19 _ (k1_off39_form ⟨1, by decide⟩ _ _) _ _
      have aB0_21 : pair0_region.sl.v1819_4 d L tab k r g1 g2 hR hin h4 = AccMath.accVec (rowF fl tab (wL L).val (2 * t1.val) (2 * k.val + 1)) (offF fl (wL L).val (2 * t1.val) (2 * k.val + 1)) 0 21 := by
        unfold pair0_region.sl.v1819_4; rw [aB0_20]
        exact acc_step d L fl tab (wL L).val (2 * t1.val) (2 * k.val + 1) 1 _ hRB ⟨20, by decide⟩ ⟨0, by decide⟩ 0#32 rfl _ hwB_20 _ (k1_off40_form ⟨1, by decide⟩ _ _) _ _
      have aB0_22 : pair0_region.sl.v1855_4 d L tab k r g1 g2 hR hin h4 = AccMath.accVec (rowF fl tab (wL L).val (2 * t1.val) (2 * k.val + 1)) (offF fl (wL L).val (2 * t1.val) (2 * k.val + 1)) 0 22 := by
        unfold pair0_region.sl.v1855_4; rw [aB0_21]
        exact acc_step d L fl tab (wL L).val (2 * t1.val) (2 * k.val + 1) 1 _ hRB ⟨21, by decide⟩ ⟨0, by decide⟩ 0#32 rfl _ hwB_21 _ (k1_off41_form ⟨1, by decide⟩ _ _) _ _
      have aB0_23 : pair0_region.sl.v1891_4 d L tab k r g1 g2 hR hin h4 = AccMath.accVec (rowF fl tab (wL L).val (2 * t1.val) (2 * k.val + 1)) (offF fl (wL L).val (2 * t1.val) (2 * k.val + 1)) 0 23 := by
        unfold pair0_region.sl.v1891_4; rw [aB0_22]
        exact acc_step d L fl tab (wL L).val (2 * t1.val) (2 * k.val + 1) 1 _ hRB ⟨22, by decide⟩ ⟨0, by decide⟩ 0#32 rfl _ hwB_22 _ (k1_off42_form ⟨1, by decide⟩ _ _) _ _
      have aB0_24 : pair0_region.sl.v1927_4 d L tab k r g1 g2 hR hin h4 = AccMath.accVec (rowF fl tab (wL L).val (2 * t1.val) (2 * k.val + 1)) (offF fl (wL L).val (2 * t1.val) (2 * k.val + 1)) 0 24 := by
        unfold pair0_region.sl.v1927_4; rw [aB0_23]
        exact acc_step d L fl tab (wL L).val (2 * t1.val) (2 * k.val + 1) 1 _ hRB ⟨23, by decide⟩ ⟨0, by decide⟩ 0#32 rfl _ hwB_23 _ (k1_off43_form ⟨1, by decide⟩ _ _) _ _
      have aB0_25 : pair0_region.sl.v1963_4 d L tab k r g1 g2 hR hin h4 = AccMath.accVec (rowF fl tab (wL L).val (2 * t1.val) (2 * k.val + 1)) (offF fl (wL L).val (2 * t1.val) (2 * k.val + 1)) 0 25 := by
        unfold pair0_region.sl.v1963_4; rw [aB0_24]
        exact acc_step d L fl tab (wL L).val (2 * t1.val) (2 * k.val + 1) 1 _ hRB ⟨24, by decide⟩ ⟨0, by decide⟩ 0#32 rfl _ hwB_24 _ (k1_off44_form ⟨1, by decide⟩ _ _) _ _
      have aB0_26 : pair0_region.sl.v1999_4 d L tab k r g1 g2 hR hin h4 = AccMath.accVec (rowF fl tab (wL L).val (2 * t1.val) (2 * k.val + 1)) (offF fl (wL L).val (2 * t1.val) (2 * k.val + 1)) 0 26 := by
        unfold pair0_region.sl.v1999_4; rw [aB0_25]
        exact acc_step d L fl tab (wL L).val (2 * t1.val) (2 * k.val + 1) 1 _ hRB ⟨25, by decide⟩ ⟨0, by decide⟩ 0#32 rfl _ hwB_25 _ (k1_off45_form ⟨1, by decide⟩ _ _) _ _
      have aB0_27 : pair0_region.sl.v2035_4 d L tab k r g1 g2 hR hin h4 = AccMath.accVec (rowF fl tab (wL L).val (2 * t1.val) (2 * k.val + 1)) (offF fl (wL L).val (2 * t1.val) (2 * k.val + 1)) 0 27 := by
        unfold pair0_region.sl.v2035_4; rw [aB0_26]
        exact acc_step d L fl tab (wL L).val (2 * t1.val) (2 * k.val + 1) 1 _ hRB ⟨26, by decide⟩ ⟨0, by decide⟩ 0#32 rfl _ hwB_26 _ (k1_off46_form ⟨1, by decide⟩ _ _) _ _
      have aB0_28 : pair0_region.sl.v2071_4 d L tab k r g1 g2 hR hin h4 = AccMath.accVec (rowF fl tab (wL L).val (2 * t1.val) (2 * k.val + 1)) (offF fl (wL L).val (2 * t1.val) (2 * k.val + 1)) 0 28 := by
        unfold pair0_region.sl.v2071_4; rw [aB0_27]
        exact acc_step d L fl tab (wL L).val (2 * t1.val) (2 * k.val + 1) 1 _ hRB ⟨27, by decide⟩ ⟨0, by decide⟩ 0#32 rfl _ hwB_27 _ (k1_off47_form ⟨1, by decide⟩ _ _) _ _
      have aB0_29 : pair0_region.sl.v2107_4 d L tab k r g1 g2 hR hin h4 = AccMath.accVec (rowF fl tab (wL L).val (2 * t1.val) (2 * k.val + 1)) (offF fl (wL L).val (2 * t1.val) (2 * k.val + 1)) 0 29 := by
        unfold pair0_region.sl.v2107_4; rw [aB0_28]
        exact acc_step d L fl tab (wL L).val (2 * t1.val) (2 * k.val + 1) 1 _ hRB ⟨28, by decide⟩ ⟨0, by decide⟩ 0#32 rfl _ hwB_28 _ (k1_off48_form ⟨1, by decide⟩ _ _) _ _
      have aB0_30 : pair0_region.sl.v2143_4 d L tab k r g1 g2 hR hin h4 = AccMath.accVec (rowF fl tab (wL L).val (2 * t1.val) (2 * k.val + 1)) (offF fl (wL L).val (2 * t1.val) (2 * k.val + 1)) 0 30 := by
        unfold pair0_region.sl.v2143_4; rw [aB0_29]
        exact acc_step d L fl tab (wL L).val (2 * t1.val) (2 * k.val + 1) 1 _ hRB ⟨29, by decide⟩ ⟨0, by decide⟩ 0#32 rfl _ hwB_29 _ (k1_off49_form ⟨1, by decide⟩ _ _) _ _
      have aB0_31 : pair0_region.sl.v2179_4 d L tab k r g1 g2 hR hin h4 = AccMath.accVec (rowF fl tab (wL L).val (2 * t1.val) (2 * k.val + 1)) (offF fl (wL L).val (2 * t1.val) (2 * k.val + 1)) 0 31 := by
        unfold pair0_region.sl.v2179_4; rw [aB0_30]
        exact acc_step d L fl tab (wL L).val (2 * t1.val) (2 * k.val + 1) 1 _ hRB ⟨30, by decide⟩ ⟨0, by decide⟩ 0#32 rfl _ hwB_30 _ (k1_off50_form ⟨1, by decide⟩ _ _) _ _
      have aB0_32 : pair0_region.sl.v2215_4 d L tab k r g1 g2 hR hin h4 = AccMath.accVec (rowF fl tab (wL L).val (2 * t1.val) (2 * k.val + 1)) (offF fl (wL L).val (2 * t1.val) (2 * k.val + 1)) 0 32 := by
        unfold pair0_region.sl.v2215_4; rw [aB0_31]
        exact acc_step d L fl tab (wL L).val (2 * t1.val) (2 * k.val + 1) 1 _ hRB ⟨31, by decide⟩ ⟨0, by decide⟩ 0#32 rfl _ hwB_31 _ (k1_off51_form ⟨1, by decide⟩ _ _) _ _
      have aB0_33 : pair0_region.sl.v1675_5 d L tab k r g1 g2 hR hin h4 = AccMath.accVec (rowF fl tab (wL L).val (2 * t1.val) (2 * k.val + 1)) (offF fl (wL L).val (2 * t1.val) (2 * k.val + 1)) 0 33 := by
        unfold pair0_region.sl.v1675_5; rw [aB0_32]
        exact acc_step d L fl tab (wL L).val (2 * t1.val) (2 * k.val + 1) 1 _ hRB ⟨32, by decide⟩ ⟨0, by decide⟩ 0#32 rfl _ hwB_32 _ (k1_off36_form ⟨2, by decide⟩ _ _) _ _
      have aB0_34 : pair0_region.sl.v1711_5 d L tab k r g1 g2 hR hin h4 = AccMath.accVec (rowF fl tab (wL L).val (2 * t1.val) (2 * k.val + 1)) (offF fl (wL L).val (2 * t1.val) (2 * k.val + 1)) 0 34 := by
        unfold pair0_region.sl.v1711_5; rw [aB0_33]
        exact acc_step d L fl tab (wL L).val (2 * t1.val) (2 * k.val + 1) 1 _ hRB ⟨33, by decide⟩ ⟨0, by decide⟩ 0#32 rfl _ hwB_33 _ (k1_off37_form ⟨2, by decide⟩ _ _) _ _
      have aB0_35 : pair0_region.sl.v1747_5 d L tab k r g1 g2 hR hin h4 = AccMath.accVec (rowF fl tab (wL L).val (2 * t1.val) (2 * k.val + 1)) (offF fl (wL L).val (2 * t1.val) (2 * k.val + 1)) 0 35 := by
        unfold pair0_region.sl.v1747_5; rw [aB0_34]
        exact acc_step d L fl tab (wL L).val (2 * t1.val) (2 * k.val + 1) 1 _ hRB ⟨34, by decide⟩ ⟨0, by decide⟩ 0#32 rfl _ hwB_34 _ (k1_off38_form ⟨2, by decide⟩ _ _) _ _
      have aB0_36 : pair0_region.sl.v1783_5 d L tab k r g1 g2 hR hin h4 = AccMath.accVec (rowF fl tab (wL L).val (2 * t1.val) (2 * k.val + 1)) (offF fl (wL L).val (2 * t1.val) (2 * k.val + 1)) 0 36 := by
        unfold pair0_region.sl.v1783_5; rw [aB0_35]
        exact acc_step d L fl tab (wL L).val (2 * t1.val) (2 * k.val + 1) 1 _ hRB ⟨35, by decide⟩ ⟨0, by decide⟩ 0#32 rfl _ hwB_35 _ (k1_off39_form ⟨2, by decide⟩ _ _) _ _
      have aB0_37 : pair0_region.sl.v1819_5 d L tab k r g1 g2 hR hin h4 = AccMath.accVec (rowF fl tab (wL L).val (2 * t1.val) (2 * k.val + 1)) (offF fl (wL L).val (2 * t1.val) (2 * k.val + 1)) 0 37 := by
        unfold pair0_region.sl.v1819_5; rw [aB0_36]
        exact acc_step d L fl tab (wL L).val (2 * t1.val) (2 * k.val + 1) 1 _ hRB ⟨36, by decide⟩ ⟨0, by decide⟩ 0#32 rfl _ hwB_36 _ (k1_off40_form ⟨2, by decide⟩ _ _) _ _
      have aB0_38 : pair0_region.sl.v1855_5 d L tab k r g1 g2 hR hin h4 = AccMath.accVec (rowF fl tab (wL L).val (2 * t1.val) (2 * k.val + 1)) (offF fl (wL L).val (2 * t1.val) (2 * k.val + 1)) 0 38 := by
        unfold pair0_region.sl.v1855_5; rw [aB0_37]
        exact acc_step d L fl tab (wL L).val (2 * t1.val) (2 * k.val + 1) 1 _ hRB ⟨37, by decide⟩ ⟨0, by decide⟩ 0#32 rfl _ hwB_37 _ (k1_off41_form ⟨2, by decide⟩ _ _) _ _
      have aB0_39 : pair0_region.sl.v1891_5 d L tab k r g1 g2 hR hin h4 = AccMath.accVec (rowF fl tab (wL L).val (2 * t1.val) (2 * k.val + 1)) (offF fl (wL L).val (2 * t1.val) (2 * k.val + 1)) 0 39 := by
        unfold pair0_region.sl.v1891_5; rw [aB0_38]
        exact acc_step d L fl tab (wL L).val (2 * t1.val) (2 * k.val + 1) 1 _ hRB ⟨38, by decide⟩ ⟨0, by decide⟩ 0#32 rfl _ hwB_38 _ (k1_off42_form ⟨2, by decide⟩ _ _) _ _
      have aB0_40 : pair0_region.sl.v1927_5 d L tab k r g1 g2 hR hin h4 = AccMath.accVec (rowF fl tab (wL L).val (2 * t1.val) (2 * k.val + 1)) (offF fl (wL L).val (2 * t1.val) (2 * k.val + 1)) 0 40 := by
        unfold pair0_region.sl.v1927_5; rw [aB0_39]
        exact acc_step d L fl tab (wL L).val (2 * t1.val) (2 * k.val + 1) 1 _ hRB ⟨39, by decide⟩ ⟨0, by decide⟩ 0#32 rfl _ hwB_39 _ (k1_off43_form ⟨2, by decide⟩ _ _) _ _
      have aB0_41 : pair0_region.sl.v1963_5 d L tab k r g1 g2 hR hin h4 = AccMath.accVec (rowF fl tab (wL L).val (2 * t1.val) (2 * k.val + 1)) (offF fl (wL L).val (2 * t1.val) (2 * k.val + 1)) 0 41 := by
        unfold pair0_region.sl.v1963_5; rw [aB0_40]
        exact acc_step d L fl tab (wL L).val (2 * t1.val) (2 * k.val + 1) 1 _ hRB ⟨40, by decide⟩ ⟨0, by decide⟩ 0#32 rfl _ hwB_40 _ (k1_off44_form ⟨2, by decide⟩ _ _) _ _
      have aB0_42 : pair0_region.sl.v1999_5 d L tab k r g1 g2 hR hin h4 = AccMath.accVec (rowF fl tab (wL L).val (2 * t1.val) (2 * k.val + 1)) (offF fl (wL L).val (2 * t1.val) (2 * k.val + 1)) 0 42 := by
        unfold pair0_region.sl.v1999_5; rw [aB0_41]
        exact acc_step d L fl tab (wL L).val (2 * t1.val) (2 * k.val + 1) 1 _ hRB ⟨41, by decide⟩ ⟨0, by decide⟩ 0#32 rfl _ hwB_41 _ (k1_off45_form ⟨2, by decide⟩ _ _) _ _
      have aB0_43 : pair0_region.sl.v2035_5 d L tab k r g1 g2 hR hin h4 = AccMath.accVec (rowF fl tab (wL L).val (2 * t1.val) (2 * k.val + 1)) (offF fl (wL L).val (2 * t1.val) (2 * k.val + 1)) 0 43 := by
        unfold pair0_region.sl.v2035_5; rw [aB0_42]
        exact acc_step d L fl tab (wL L).val (2 * t1.val) (2 * k.val + 1) 1 _ hRB ⟨42, by decide⟩ ⟨0, by decide⟩ 0#32 rfl _ hwB_42 _ (k1_off46_form ⟨2, by decide⟩ _ _) _ _
      have aB0_44 : pair0_region.sl.v2071_5 d L tab k r g1 g2 hR hin h4 = AccMath.accVec (rowF fl tab (wL L).val (2 * t1.val) (2 * k.val + 1)) (offF fl (wL L).val (2 * t1.val) (2 * k.val + 1)) 0 44 := by
        unfold pair0_region.sl.v2071_5; rw [aB0_43]
        exact acc_step d L fl tab (wL L).val (2 * t1.val) (2 * k.val + 1) 1 _ hRB ⟨43, by decide⟩ ⟨0, by decide⟩ 0#32 rfl _ hwB_43 _ (k1_off47_form ⟨2, by decide⟩ _ _) _ _
      have aB0_45 : pair0_region.sl.v2107_5 d L tab k r g1 g2 hR hin h4 = AccMath.accVec (rowF fl tab (wL L).val (2 * t1.val) (2 * k.val + 1)) (offF fl (wL L).val (2 * t1.val) (2 * k.val + 1)) 0 45 := by
        unfold pair0_region.sl.v2107_5; rw [aB0_44]
        exact acc_step d L fl tab (wL L).val (2 * t1.val) (2 * k.val + 1) 1 _ hRB ⟨44, by decide⟩ ⟨0, by decide⟩ 0#32 rfl _ hwB_44 _ (k1_off48_form ⟨2, by decide⟩ _ _) _ _
      have aB0_46 : pair0_region.sl.v2143_5 d L tab k r g1 g2 hR hin h4 = AccMath.accVec (rowF fl tab (wL L).val (2 * t1.val) (2 * k.val + 1)) (offF fl (wL L).val (2 * t1.val) (2 * k.val + 1)) 0 46 := by
        unfold pair0_region.sl.v2143_5; rw [aB0_45]
        exact acc_step d L fl tab (wL L).val (2 * t1.val) (2 * k.val + 1) 1 _ hRB ⟨45, by decide⟩ ⟨0, by decide⟩ 0#32 rfl _ hwB_45 _ (k1_off49_form ⟨2, by decide⟩ _ _) _ _
      have aB0_47 : pair0_region.sl.v2179_5 d L tab k r g1 g2 hR hin h4 = AccMath.accVec (rowF fl tab (wL L).val (2 * t1.val) (2 * k.val + 1)) (offF fl (wL L).val (2 * t1.val) (2 * k.val + 1)) 0 47 := by
        unfold pair0_region.sl.v2179_5; rw [aB0_46]
        exact acc_step d L fl tab (wL L).val (2 * t1.val) (2 * k.val + 1) 1 _ hRB ⟨46, by decide⟩ ⟨0, by decide⟩ 0#32 rfl _ hwB_46 _ (k1_off50_form ⟨2, by decide⟩ _ _) _ _
      have aB0_48 : pair0_region.sl.v2215_5 d L tab k r g1 g2 hR hin h4 = AccMath.accVec (rowF fl tab (wL L).val (2 * t1.val) (2 * k.val + 1)) (offF fl (wL L).val (2 * t1.val) (2 * k.val + 1)) 0 48 := by
        unfold pair0_region.sl.v2215_5; rw [aB0_47]
        exact acc_step d L fl tab (wL L).val (2 * t1.val) (2 * k.val + 1) 1 _ hRB ⟨47, by decide⟩ ⟨0, by decide⟩ 0#32 rfl _ hwB_47 _ (k1_off51_form ⟨2, by decide⟩ _ _) _ _
      have aB0_49 : pair0_region.sl.v1580 d L tab k r g1 g2 hR hin h4 = AccMath.accVec (rowF fl tab (wL L).val (2 * t1.val) (2 * k.val + 1)) (offF fl (wL L).val (2 * t1.val) (2 * k.val + 1)) 0 49 := by
        unfold pair0_region.sl.v1580; rw [aB0_48]
        exact acc_step d L fl tab (wL L).val (2 * t1.val) (2 * k.val + 1) 1 _ hRB ⟨48, by decide⟩ ⟨0, by decide⟩ 0#32 rfl _ hwB_48 _ (k1_off53_form _ _) _ _
      have aB0_50 : pair0_region.sl.v1614 d L tab k r g1 g2 hR hin h4 = AccMath.accVec (rowF fl tab (wL L).val (2 * t1.val) (2 * k.val + 1)) (offF fl (wL L).val (2 * t1.val) (2 * k.val + 1)) 0 50 := by
        unfold pair0_region.sl.v1614; rw [aB0_49]
        exact acc_step d L fl tab (wL L).val (2 * t1.val) (2 * k.val + 1) 1 _ hRB ⟨49, by decide⟩ ⟨0, by decide⟩ 0#32 rfl _ hwB_49 _ (k1_off54_form _ _) _ _
      have hPB0 : ∀ x : S1x1x16.Idx, pair0_region.sl.v1643 d L tab k r g1 g2 hR hin h4 x = Spec.bagPartial fl tab (128 * (wL L).val + 16 * (2 * t1.val) + (2 * k.val + 1)) (16 * 0 + (x 2).val) 50 := fun x => by
        unfold pair0_region.sl.v1643; rw [aB0_50]; exact payload_ok fl tab (wL L).val (2 * t1.val) (2 * k.val + 1) ⟨0, by decide⟩ _ x
      have aB1_0 : pair0_region.sl.v1561 = AccMath.accVec (rowF fl tab (wL L).val (2 * t1.val) (2 * k.val + 1)) (offF fl (wL L).val (2 * t1.val) (2 * k.val + 1)) 1 0 := acc_zero fl tab (wL L).val (2 * t1.val) (2 * k.val + 1) 1
      have aB1_1 : pair0_region.sl.v1683_3 d L tab k r g1 g2 hR hin h4 = AccMath.accVec (rowF fl tab (wL L).val (2 * t1.val) (2 * k.val + 1)) (offF fl (wL L).val (2 * t1.val) (2 * k.val + 1)) 1 1 := by
        unfold pair0_region.sl.v1683_3; rw [aB1_0]
        exact acc_step d L fl tab (wL L).val (2 * t1.val) (2 * k.val + 1) 1 _ hRB ⟨0, by decide⟩ ⟨1, by decide⟩ 16#32 rfl _ hwB_0 _ (k1_off36_form ⟨0, by decide⟩ _ _) _ _
      have aB1_2 : pair0_region.sl.v1719_3 d L tab k r g1 g2 hR hin h4 = AccMath.accVec (rowF fl tab (wL L).val (2 * t1.val) (2 * k.val + 1)) (offF fl (wL L).val (2 * t1.val) (2 * k.val + 1)) 1 2 := by
        unfold pair0_region.sl.v1719_3; rw [aB1_1]
        exact acc_step d L fl tab (wL L).val (2 * t1.val) (2 * k.val + 1) 1 _ hRB ⟨1, by decide⟩ ⟨1, by decide⟩ 16#32 rfl _ hwB_1 _ (k1_off37_form ⟨0, by decide⟩ _ _) _ _
      have aB1_3 : pair0_region.sl.v1755_3 d L tab k r g1 g2 hR hin h4 = AccMath.accVec (rowF fl tab (wL L).val (2 * t1.val) (2 * k.val + 1)) (offF fl (wL L).val (2 * t1.val) (2 * k.val + 1)) 1 3 := by
        unfold pair0_region.sl.v1755_3; rw [aB1_2]
        exact acc_step d L fl tab (wL L).val (2 * t1.val) (2 * k.val + 1) 1 _ hRB ⟨2, by decide⟩ ⟨1, by decide⟩ 16#32 rfl _ hwB_2 _ (k1_off38_form ⟨0, by decide⟩ _ _) _ _
      have aB1_4 : pair0_region.sl.v1791_3 d L tab k r g1 g2 hR hin h4 = AccMath.accVec (rowF fl tab (wL L).val (2 * t1.val) (2 * k.val + 1)) (offF fl (wL L).val (2 * t1.val) (2 * k.val + 1)) 1 4 := by
        unfold pair0_region.sl.v1791_3; rw [aB1_3]
        exact acc_step d L fl tab (wL L).val (2 * t1.val) (2 * k.val + 1) 1 _ hRB ⟨3, by decide⟩ ⟨1, by decide⟩ 16#32 rfl _ hwB_3 _ (k1_off39_form ⟨0, by decide⟩ _ _) _ _
      have aB1_5 : pair0_region.sl.v1827_3 d L tab k r g1 g2 hR hin h4 = AccMath.accVec (rowF fl tab (wL L).val (2 * t1.val) (2 * k.val + 1)) (offF fl (wL L).val (2 * t1.val) (2 * k.val + 1)) 1 5 := by
        unfold pair0_region.sl.v1827_3; rw [aB1_4]
        exact acc_step d L fl tab (wL L).val (2 * t1.val) (2 * k.val + 1) 1 _ hRB ⟨4, by decide⟩ ⟨1, by decide⟩ 16#32 rfl _ hwB_4 _ (k1_off40_form ⟨0, by decide⟩ _ _) _ _
      have aB1_6 : pair0_region.sl.v1863_3 d L tab k r g1 g2 hR hin h4 = AccMath.accVec (rowF fl tab (wL L).val (2 * t1.val) (2 * k.val + 1)) (offF fl (wL L).val (2 * t1.val) (2 * k.val + 1)) 1 6 := by
        unfold pair0_region.sl.v1863_3; rw [aB1_5]
        exact acc_step d L fl tab (wL L).val (2 * t1.val) (2 * k.val + 1) 1 _ hRB ⟨5, by decide⟩ ⟨1, by decide⟩ 16#32 rfl _ hwB_5 _ (k1_off41_form ⟨0, by decide⟩ _ _) _ _
      have aB1_7 : pair0_region.sl.v1899_3 d L tab k r g1 g2 hR hin h4 = AccMath.accVec (rowF fl tab (wL L).val (2 * t1.val) (2 * k.val + 1)) (offF fl (wL L).val (2 * t1.val) (2 * k.val + 1)) 1 7 := by
        unfold pair0_region.sl.v1899_3; rw [aB1_6]
        exact acc_step d L fl tab (wL L).val (2 * t1.val) (2 * k.val + 1) 1 _ hRB ⟨6, by decide⟩ ⟨1, by decide⟩ 16#32 rfl _ hwB_6 _ (k1_off42_form ⟨0, by decide⟩ _ _) _ _
      have aB1_8 : pair0_region.sl.v1935_3 d L tab k r g1 g2 hR hin h4 = AccMath.accVec (rowF fl tab (wL L).val (2 * t1.val) (2 * k.val + 1)) (offF fl (wL L).val (2 * t1.val) (2 * k.val + 1)) 1 8 := by
        unfold pair0_region.sl.v1935_3; rw [aB1_7]
        exact acc_step d L fl tab (wL L).val (2 * t1.val) (2 * k.val + 1) 1 _ hRB ⟨7, by decide⟩ ⟨1, by decide⟩ 16#32 rfl _ hwB_7 _ (k1_off43_form ⟨0, by decide⟩ _ _) _ _
      have aB1_9 : pair0_region.sl.v1971_3 d L tab k r g1 g2 hR hin h4 = AccMath.accVec (rowF fl tab (wL L).val (2 * t1.val) (2 * k.val + 1)) (offF fl (wL L).val (2 * t1.val) (2 * k.val + 1)) 1 9 := by
        unfold pair0_region.sl.v1971_3; rw [aB1_8]
        exact acc_step d L fl tab (wL L).val (2 * t1.val) (2 * k.val + 1) 1 _ hRB ⟨8, by decide⟩ ⟨1, by decide⟩ 16#32 rfl _ hwB_8 _ (k1_off44_form ⟨0, by decide⟩ _ _) _ _
      have aB1_10 : pair0_region.sl.v2007_3 d L tab k r g1 g2 hR hin h4 = AccMath.accVec (rowF fl tab (wL L).val (2 * t1.val) (2 * k.val + 1)) (offF fl (wL L).val (2 * t1.val) (2 * k.val + 1)) 1 10 := by
        unfold pair0_region.sl.v2007_3; rw [aB1_9]
        exact acc_step d L fl tab (wL L).val (2 * t1.val) (2 * k.val + 1) 1 _ hRB ⟨9, by decide⟩ ⟨1, by decide⟩ 16#32 rfl _ hwB_9 _ (k1_off45_form ⟨0, by decide⟩ _ _) _ _
      have aB1_11 : pair0_region.sl.v2043_3 d L tab k r g1 g2 hR hin h4 = AccMath.accVec (rowF fl tab (wL L).val (2 * t1.val) (2 * k.val + 1)) (offF fl (wL L).val (2 * t1.val) (2 * k.val + 1)) 1 11 := by
        unfold pair0_region.sl.v2043_3; rw [aB1_10]
        exact acc_step d L fl tab (wL L).val (2 * t1.val) (2 * k.val + 1) 1 _ hRB ⟨10, by decide⟩ ⟨1, by decide⟩ 16#32 rfl _ hwB_10 _ (k1_off46_form ⟨0, by decide⟩ _ _) _ _
      have aB1_12 : pair0_region.sl.v2079_3 d L tab k r g1 g2 hR hin h4 = AccMath.accVec (rowF fl tab (wL L).val (2 * t1.val) (2 * k.val + 1)) (offF fl (wL L).val (2 * t1.val) (2 * k.val + 1)) 1 12 := by
        unfold pair0_region.sl.v2079_3; rw [aB1_11]
        exact acc_step d L fl tab (wL L).val (2 * t1.val) (2 * k.val + 1) 1 _ hRB ⟨11, by decide⟩ ⟨1, by decide⟩ 16#32 rfl _ hwB_11 _ (k1_off47_form ⟨0, by decide⟩ _ _) _ _
      have aB1_13 : pair0_region.sl.v2115_3 d L tab k r g1 g2 hR hin h4 = AccMath.accVec (rowF fl tab (wL L).val (2 * t1.val) (2 * k.val + 1)) (offF fl (wL L).val (2 * t1.val) (2 * k.val + 1)) 1 13 := by
        unfold pair0_region.sl.v2115_3; rw [aB1_12]
        exact acc_step d L fl tab (wL L).val (2 * t1.val) (2 * k.val + 1) 1 _ hRB ⟨12, by decide⟩ ⟨1, by decide⟩ 16#32 rfl _ hwB_12 _ (k1_off48_form ⟨0, by decide⟩ _ _) _ _
      have aB1_14 : pair0_region.sl.v2151_3 d L tab k r g1 g2 hR hin h4 = AccMath.accVec (rowF fl tab (wL L).val (2 * t1.val) (2 * k.val + 1)) (offF fl (wL L).val (2 * t1.val) (2 * k.val + 1)) 1 14 := by
        unfold pair0_region.sl.v2151_3; rw [aB1_13]
        exact acc_step d L fl tab (wL L).val (2 * t1.val) (2 * k.val + 1) 1 _ hRB ⟨13, by decide⟩ ⟨1, by decide⟩ 16#32 rfl _ hwB_13 _ (k1_off49_form ⟨0, by decide⟩ _ _) _ _
      have aB1_15 : pair0_region.sl.v2187_3 d L tab k r g1 g2 hR hin h4 = AccMath.accVec (rowF fl tab (wL L).val (2 * t1.val) (2 * k.val + 1)) (offF fl (wL L).val (2 * t1.val) (2 * k.val + 1)) 1 15 := by
        unfold pair0_region.sl.v2187_3; rw [aB1_14]
        exact acc_step d L fl tab (wL L).val (2 * t1.val) (2 * k.val + 1) 1 _ hRB ⟨14, by decide⟩ ⟨1, by decide⟩ 16#32 rfl _ hwB_14 _ (k1_off50_form ⟨0, by decide⟩ _ _) _ _
      have aB1_16 : pair0_region.sl.v2223_3 d L tab k r g1 g2 hR hin h4 = AccMath.accVec (rowF fl tab (wL L).val (2 * t1.val) (2 * k.val + 1)) (offF fl (wL L).val (2 * t1.val) (2 * k.val + 1)) 1 16 := by
        unfold pair0_region.sl.v2223_3; rw [aB1_15]
        exact acc_step d L fl tab (wL L).val (2 * t1.val) (2 * k.val + 1) 1 _ hRB ⟨15, by decide⟩ ⟨1, by decide⟩ 16#32 rfl _ hwB_15 _ (k1_off51_form ⟨0, by decide⟩ _ _) _ _
      have aB1_17 : pair0_region.sl.v1683_4 d L tab k r g1 g2 hR hin h4 = AccMath.accVec (rowF fl tab (wL L).val (2 * t1.val) (2 * k.val + 1)) (offF fl (wL L).val (2 * t1.val) (2 * k.val + 1)) 1 17 := by
        unfold pair0_region.sl.v1683_4; rw [aB1_16]
        exact acc_step d L fl tab (wL L).val (2 * t1.val) (2 * k.val + 1) 1 _ hRB ⟨16, by decide⟩ ⟨1, by decide⟩ 16#32 rfl _ hwB_16 _ (k1_off36_form ⟨1, by decide⟩ _ _) _ _
      have aB1_18 : pair0_region.sl.v1719_4 d L tab k r g1 g2 hR hin h4 = AccMath.accVec (rowF fl tab (wL L).val (2 * t1.val) (2 * k.val + 1)) (offF fl (wL L).val (2 * t1.val) (2 * k.val + 1)) 1 18 := by
        unfold pair0_region.sl.v1719_4; rw [aB1_17]
        exact acc_step d L fl tab (wL L).val (2 * t1.val) (2 * k.val + 1) 1 _ hRB ⟨17, by decide⟩ ⟨1, by decide⟩ 16#32 rfl _ hwB_17 _ (k1_off37_form ⟨1, by decide⟩ _ _) _ _
      have aB1_19 : pair0_region.sl.v1755_4 d L tab k r g1 g2 hR hin h4 = AccMath.accVec (rowF fl tab (wL L).val (2 * t1.val) (2 * k.val + 1)) (offF fl (wL L).val (2 * t1.val) (2 * k.val + 1)) 1 19 := by
        unfold pair0_region.sl.v1755_4; rw [aB1_18]
        exact acc_step d L fl tab (wL L).val (2 * t1.val) (2 * k.val + 1) 1 _ hRB ⟨18, by decide⟩ ⟨1, by decide⟩ 16#32 rfl _ hwB_18 _ (k1_off38_form ⟨1, by decide⟩ _ _) _ _
      have aB1_20 : pair0_region.sl.v1791_4 d L tab k r g1 g2 hR hin h4 = AccMath.accVec (rowF fl tab (wL L).val (2 * t1.val) (2 * k.val + 1)) (offF fl (wL L).val (2 * t1.val) (2 * k.val + 1)) 1 20 := by
        unfold pair0_region.sl.v1791_4; rw [aB1_19]
        exact acc_step d L fl tab (wL L).val (2 * t1.val) (2 * k.val + 1) 1 _ hRB ⟨19, by decide⟩ ⟨1, by decide⟩ 16#32 rfl _ hwB_19 _ (k1_off39_form ⟨1, by decide⟩ _ _) _ _
      have aB1_21 : pair0_region.sl.v1827_4 d L tab k r g1 g2 hR hin h4 = AccMath.accVec (rowF fl tab (wL L).val (2 * t1.val) (2 * k.val + 1)) (offF fl (wL L).val (2 * t1.val) (2 * k.val + 1)) 1 21 := by
        unfold pair0_region.sl.v1827_4; rw [aB1_20]
        exact acc_step d L fl tab (wL L).val (2 * t1.val) (2 * k.val + 1) 1 _ hRB ⟨20, by decide⟩ ⟨1, by decide⟩ 16#32 rfl _ hwB_20 _ (k1_off40_form ⟨1, by decide⟩ _ _) _ _
      have aB1_22 : pair0_region.sl.v1863_4 d L tab k r g1 g2 hR hin h4 = AccMath.accVec (rowF fl tab (wL L).val (2 * t1.val) (2 * k.val + 1)) (offF fl (wL L).val (2 * t1.val) (2 * k.val + 1)) 1 22 := by
        unfold pair0_region.sl.v1863_4; rw [aB1_21]
        exact acc_step d L fl tab (wL L).val (2 * t1.val) (2 * k.val + 1) 1 _ hRB ⟨21, by decide⟩ ⟨1, by decide⟩ 16#32 rfl _ hwB_21 _ (k1_off41_form ⟨1, by decide⟩ _ _) _ _
      have aB1_23 : pair0_region.sl.v1899_4 d L tab k r g1 g2 hR hin h4 = AccMath.accVec (rowF fl tab (wL L).val (2 * t1.val) (2 * k.val + 1)) (offF fl (wL L).val (2 * t1.val) (2 * k.val + 1)) 1 23 := by
        unfold pair0_region.sl.v1899_4; rw [aB1_22]
        exact acc_step d L fl tab (wL L).val (2 * t1.val) (2 * k.val + 1) 1 _ hRB ⟨22, by decide⟩ ⟨1, by decide⟩ 16#32 rfl _ hwB_22 _ (k1_off42_form ⟨1, by decide⟩ _ _) _ _
      have aB1_24 : pair0_region.sl.v1935_4 d L tab k r g1 g2 hR hin h4 = AccMath.accVec (rowF fl tab (wL L).val (2 * t1.val) (2 * k.val + 1)) (offF fl (wL L).val (2 * t1.val) (2 * k.val + 1)) 1 24 := by
        unfold pair0_region.sl.v1935_4; rw [aB1_23]
        exact acc_step d L fl tab (wL L).val (2 * t1.val) (2 * k.val + 1) 1 _ hRB ⟨23, by decide⟩ ⟨1, by decide⟩ 16#32 rfl _ hwB_23 _ (k1_off43_form ⟨1, by decide⟩ _ _) _ _
      have aB1_25 : pair0_region.sl.v1971_4 d L tab k r g1 g2 hR hin h4 = AccMath.accVec (rowF fl tab (wL L).val (2 * t1.val) (2 * k.val + 1)) (offF fl (wL L).val (2 * t1.val) (2 * k.val + 1)) 1 25 := by
        unfold pair0_region.sl.v1971_4; rw [aB1_24]
        exact acc_step d L fl tab (wL L).val (2 * t1.val) (2 * k.val + 1) 1 _ hRB ⟨24, by decide⟩ ⟨1, by decide⟩ 16#32 rfl _ hwB_24 _ (k1_off44_form ⟨1, by decide⟩ _ _) _ _
      have aB1_26 : pair0_region.sl.v2007_4 d L tab k r g1 g2 hR hin h4 = AccMath.accVec (rowF fl tab (wL L).val (2 * t1.val) (2 * k.val + 1)) (offF fl (wL L).val (2 * t1.val) (2 * k.val + 1)) 1 26 := by
        unfold pair0_region.sl.v2007_4; rw [aB1_25]
        exact acc_step d L fl tab (wL L).val (2 * t1.val) (2 * k.val + 1) 1 _ hRB ⟨25, by decide⟩ ⟨1, by decide⟩ 16#32 rfl _ hwB_25 _ (k1_off45_form ⟨1, by decide⟩ _ _) _ _
      have aB1_27 : pair0_region.sl.v2043_4 d L tab k r g1 g2 hR hin h4 = AccMath.accVec (rowF fl tab (wL L).val (2 * t1.val) (2 * k.val + 1)) (offF fl (wL L).val (2 * t1.val) (2 * k.val + 1)) 1 27 := by
        unfold pair0_region.sl.v2043_4; rw [aB1_26]
        exact acc_step d L fl tab (wL L).val (2 * t1.val) (2 * k.val + 1) 1 _ hRB ⟨26, by decide⟩ ⟨1, by decide⟩ 16#32 rfl _ hwB_26 _ (k1_off46_form ⟨1, by decide⟩ _ _) _ _
      have aB1_28 : pair0_region.sl.v2079_4 d L tab k r g1 g2 hR hin h4 = AccMath.accVec (rowF fl tab (wL L).val (2 * t1.val) (2 * k.val + 1)) (offF fl (wL L).val (2 * t1.val) (2 * k.val + 1)) 1 28 := by
        unfold pair0_region.sl.v2079_4; rw [aB1_27]
        exact acc_step d L fl tab (wL L).val (2 * t1.val) (2 * k.val + 1) 1 _ hRB ⟨27, by decide⟩ ⟨1, by decide⟩ 16#32 rfl _ hwB_27 _ (k1_off47_form ⟨1, by decide⟩ _ _) _ _
      have aB1_29 : pair0_region.sl.v2115_4 d L tab k r g1 g2 hR hin h4 = AccMath.accVec (rowF fl tab (wL L).val (2 * t1.val) (2 * k.val + 1)) (offF fl (wL L).val (2 * t1.val) (2 * k.val + 1)) 1 29 := by
        unfold pair0_region.sl.v2115_4; rw [aB1_28]
        exact acc_step d L fl tab (wL L).val (2 * t1.val) (2 * k.val + 1) 1 _ hRB ⟨28, by decide⟩ ⟨1, by decide⟩ 16#32 rfl _ hwB_28 _ (k1_off48_form ⟨1, by decide⟩ _ _) _ _
      have aB1_30 : pair0_region.sl.v2151_4 d L tab k r g1 g2 hR hin h4 = AccMath.accVec (rowF fl tab (wL L).val (2 * t1.val) (2 * k.val + 1)) (offF fl (wL L).val (2 * t1.val) (2 * k.val + 1)) 1 30 := by
        unfold pair0_region.sl.v2151_4; rw [aB1_29]
        exact acc_step d L fl tab (wL L).val (2 * t1.val) (2 * k.val + 1) 1 _ hRB ⟨29, by decide⟩ ⟨1, by decide⟩ 16#32 rfl _ hwB_29 _ (k1_off49_form ⟨1, by decide⟩ _ _) _ _
      have aB1_31 : pair0_region.sl.v2187_4 d L tab k r g1 g2 hR hin h4 = AccMath.accVec (rowF fl tab (wL L).val (2 * t1.val) (2 * k.val + 1)) (offF fl (wL L).val (2 * t1.val) (2 * k.val + 1)) 1 31 := by
        unfold pair0_region.sl.v2187_4; rw [aB1_30]
        exact acc_step d L fl tab (wL L).val (2 * t1.val) (2 * k.val + 1) 1 _ hRB ⟨30, by decide⟩ ⟨1, by decide⟩ 16#32 rfl _ hwB_30 _ (k1_off50_form ⟨1, by decide⟩ _ _) _ _
      have aB1_32 : pair0_region.sl.v2223_4 d L tab k r g1 g2 hR hin h4 = AccMath.accVec (rowF fl tab (wL L).val (2 * t1.val) (2 * k.val + 1)) (offF fl (wL L).val (2 * t1.val) (2 * k.val + 1)) 1 32 := by
        unfold pair0_region.sl.v2223_4; rw [aB1_31]
        exact acc_step d L fl tab (wL L).val (2 * t1.val) (2 * k.val + 1) 1 _ hRB ⟨31, by decide⟩ ⟨1, by decide⟩ 16#32 rfl _ hwB_31 _ (k1_off51_form ⟨1, by decide⟩ _ _) _ _
      have aB1_33 : pair0_region.sl.v1683_5 d L tab k r g1 g2 hR hin h4 = AccMath.accVec (rowF fl tab (wL L).val (2 * t1.val) (2 * k.val + 1)) (offF fl (wL L).val (2 * t1.val) (2 * k.val + 1)) 1 33 := by
        unfold pair0_region.sl.v1683_5; rw [aB1_32]
        exact acc_step d L fl tab (wL L).val (2 * t1.val) (2 * k.val + 1) 1 _ hRB ⟨32, by decide⟩ ⟨1, by decide⟩ 16#32 rfl _ hwB_32 _ (k1_off36_form ⟨2, by decide⟩ _ _) _ _
      have aB1_34 : pair0_region.sl.v1719_5 d L tab k r g1 g2 hR hin h4 = AccMath.accVec (rowF fl tab (wL L).val (2 * t1.val) (2 * k.val + 1)) (offF fl (wL L).val (2 * t1.val) (2 * k.val + 1)) 1 34 := by
        unfold pair0_region.sl.v1719_5; rw [aB1_33]
        exact acc_step d L fl tab (wL L).val (2 * t1.val) (2 * k.val + 1) 1 _ hRB ⟨33, by decide⟩ ⟨1, by decide⟩ 16#32 rfl _ hwB_33 _ (k1_off37_form ⟨2, by decide⟩ _ _) _ _
      have aB1_35 : pair0_region.sl.v1755_5 d L tab k r g1 g2 hR hin h4 = AccMath.accVec (rowF fl tab (wL L).val (2 * t1.val) (2 * k.val + 1)) (offF fl (wL L).val (2 * t1.val) (2 * k.val + 1)) 1 35 := by
        unfold pair0_region.sl.v1755_5; rw [aB1_34]
        exact acc_step d L fl tab (wL L).val (2 * t1.val) (2 * k.val + 1) 1 _ hRB ⟨34, by decide⟩ ⟨1, by decide⟩ 16#32 rfl _ hwB_34 _ (k1_off38_form ⟨2, by decide⟩ _ _) _ _
      have aB1_36 : pair0_region.sl.v1791_5 d L tab k r g1 g2 hR hin h4 = AccMath.accVec (rowF fl tab (wL L).val (2 * t1.val) (2 * k.val + 1)) (offF fl (wL L).val (2 * t1.val) (2 * k.val + 1)) 1 36 := by
        unfold pair0_region.sl.v1791_5; rw [aB1_35]
        exact acc_step d L fl tab (wL L).val (2 * t1.val) (2 * k.val + 1) 1 _ hRB ⟨35, by decide⟩ ⟨1, by decide⟩ 16#32 rfl _ hwB_35 _ (k1_off39_form ⟨2, by decide⟩ _ _) _ _
      have aB1_37 : pair0_region.sl.v1827_5 d L tab k r g1 g2 hR hin h4 = AccMath.accVec (rowF fl tab (wL L).val (2 * t1.val) (2 * k.val + 1)) (offF fl (wL L).val (2 * t1.val) (2 * k.val + 1)) 1 37 := by
        unfold pair0_region.sl.v1827_5; rw [aB1_36]
        exact acc_step d L fl tab (wL L).val (2 * t1.val) (2 * k.val + 1) 1 _ hRB ⟨36, by decide⟩ ⟨1, by decide⟩ 16#32 rfl _ hwB_36 _ (k1_off40_form ⟨2, by decide⟩ _ _) _ _
      have aB1_38 : pair0_region.sl.v1863_5 d L tab k r g1 g2 hR hin h4 = AccMath.accVec (rowF fl tab (wL L).val (2 * t1.val) (2 * k.val + 1)) (offF fl (wL L).val (2 * t1.val) (2 * k.val + 1)) 1 38 := by
        unfold pair0_region.sl.v1863_5; rw [aB1_37]
        exact acc_step d L fl tab (wL L).val (2 * t1.val) (2 * k.val + 1) 1 _ hRB ⟨37, by decide⟩ ⟨1, by decide⟩ 16#32 rfl _ hwB_37 _ (k1_off41_form ⟨2, by decide⟩ _ _) _ _
      have aB1_39 : pair0_region.sl.v1899_5 d L tab k r g1 g2 hR hin h4 = AccMath.accVec (rowF fl tab (wL L).val (2 * t1.val) (2 * k.val + 1)) (offF fl (wL L).val (2 * t1.val) (2 * k.val + 1)) 1 39 := by
        unfold pair0_region.sl.v1899_5; rw [aB1_38]
        exact acc_step d L fl tab (wL L).val (2 * t1.val) (2 * k.val + 1) 1 _ hRB ⟨38, by decide⟩ ⟨1, by decide⟩ 16#32 rfl _ hwB_38 _ (k1_off42_form ⟨2, by decide⟩ _ _) _ _
      have aB1_40 : pair0_region.sl.v1935_5 d L tab k r g1 g2 hR hin h4 = AccMath.accVec (rowF fl tab (wL L).val (2 * t1.val) (2 * k.val + 1)) (offF fl (wL L).val (2 * t1.val) (2 * k.val + 1)) 1 40 := by
        unfold pair0_region.sl.v1935_5; rw [aB1_39]
        exact acc_step d L fl tab (wL L).val (2 * t1.val) (2 * k.val + 1) 1 _ hRB ⟨39, by decide⟩ ⟨1, by decide⟩ 16#32 rfl _ hwB_39 _ (k1_off43_form ⟨2, by decide⟩ _ _) _ _
      have aB1_41 : pair0_region.sl.v1971_5 d L tab k r g1 g2 hR hin h4 = AccMath.accVec (rowF fl tab (wL L).val (2 * t1.val) (2 * k.val + 1)) (offF fl (wL L).val (2 * t1.val) (2 * k.val + 1)) 1 41 := by
        unfold pair0_region.sl.v1971_5; rw [aB1_40]
        exact acc_step d L fl tab (wL L).val (2 * t1.val) (2 * k.val + 1) 1 _ hRB ⟨40, by decide⟩ ⟨1, by decide⟩ 16#32 rfl _ hwB_40 _ (k1_off44_form ⟨2, by decide⟩ _ _) _ _
      have aB1_42 : pair0_region.sl.v2007_5 d L tab k r g1 g2 hR hin h4 = AccMath.accVec (rowF fl tab (wL L).val (2 * t1.val) (2 * k.val + 1)) (offF fl (wL L).val (2 * t1.val) (2 * k.val + 1)) 1 42 := by
        unfold pair0_region.sl.v2007_5; rw [aB1_41]
        exact acc_step d L fl tab (wL L).val (2 * t1.val) (2 * k.val + 1) 1 _ hRB ⟨41, by decide⟩ ⟨1, by decide⟩ 16#32 rfl _ hwB_41 _ (k1_off45_form ⟨2, by decide⟩ _ _) _ _
      have aB1_43 : pair0_region.sl.v2043_5 d L tab k r g1 g2 hR hin h4 = AccMath.accVec (rowF fl tab (wL L).val (2 * t1.val) (2 * k.val + 1)) (offF fl (wL L).val (2 * t1.val) (2 * k.val + 1)) 1 43 := by
        unfold pair0_region.sl.v2043_5; rw [aB1_42]
        exact acc_step d L fl tab (wL L).val (2 * t1.val) (2 * k.val + 1) 1 _ hRB ⟨42, by decide⟩ ⟨1, by decide⟩ 16#32 rfl _ hwB_42 _ (k1_off46_form ⟨2, by decide⟩ _ _) _ _
      have aB1_44 : pair0_region.sl.v2079_5 d L tab k r g1 g2 hR hin h4 = AccMath.accVec (rowF fl tab (wL L).val (2 * t1.val) (2 * k.val + 1)) (offF fl (wL L).val (2 * t1.val) (2 * k.val + 1)) 1 44 := by
        unfold pair0_region.sl.v2079_5; rw [aB1_43]
        exact acc_step d L fl tab (wL L).val (2 * t1.val) (2 * k.val + 1) 1 _ hRB ⟨43, by decide⟩ ⟨1, by decide⟩ 16#32 rfl _ hwB_43 _ (k1_off47_form ⟨2, by decide⟩ _ _) _ _
      have aB1_45 : pair0_region.sl.v2115_5 d L tab k r g1 g2 hR hin h4 = AccMath.accVec (rowF fl tab (wL L).val (2 * t1.val) (2 * k.val + 1)) (offF fl (wL L).val (2 * t1.val) (2 * k.val + 1)) 1 45 := by
        unfold pair0_region.sl.v2115_5; rw [aB1_44]
        exact acc_step d L fl tab (wL L).val (2 * t1.val) (2 * k.val + 1) 1 _ hRB ⟨44, by decide⟩ ⟨1, by decide⟩ 16#32 rfl _ hwB_44 _ (k1_off48_form ⟨2, by decide⟩ _ _) _ _
      have aB1_46 : pair0_region.sl.v2151_5 d L tab k r g1 g2 hR hin h4 = AccMath.accVec (rowF fl tab (wL L).val (2 * t1.val) (2 * k.val + 1)) (offF fl (wL L).val (2 * t1.val) (2 * k.val + 1)) 1 46 := by
        unfold pair0_region.sl.v2151_5; rw [aB1_45]
        exact acc_step d L fl tab (wL L).val (2 * t1.val) (2 * k.val + 1) 1 _ hRB ⟨45, by decide⟩ ⟨1, by decide⟩ 16#32 rfl _ hwB_45 _ (k1_off49_form ⟨2, by decide⟩ _ _) _ _
      have aB1_47 : pair0_region.sl.v2187_5 d L tab k r g1 g2 hR hin h4 = AccMath.accVec (rowF fl tab (wL L).val (2 * t1.val) (2 * k.val + 1)) (offF fl (wL L).val (2 * t1.val) (2 * k.val + 1)) 1 47 := by
        unfold pair0_region.sl.v2187_5; rw [aB1_46]
        exact acc_step d L fl tab (wL L).val (2 * t1.val) (2 * k.val + 1) 1 _ hRB ⟨46, by decide⟩ ⟨1, by decide⟩ 16#32 rfl _ hwB_46 _ (k1_off50_form ⟨2, by decide⟩ _ _) _ _
      have aB1_48 : pair0_region.sl.v2223_5 d L tab k r g1 g2 hR hin h4 = AccMath.accVec (rowF fl tab (wL L).val (2 * t1.val) (2 * k.val + 1)) (offF fl (wL L).val (2 * t1.val) (2 * k.val + 1)) 1 48 := by
        unfold pair0_region.sl.v2223_5; rw [aB1_47]
        exact acc_step d L fl tab (wL L).val (2 * t1.val) (2 * k.val + 1) 1 _ hRB ⟨47, by decide⟩ ⟨1, by decide⟩ 16#32 rfl _ hwB_47 _ (k1_off51_form ⟨2, by decide⟩ _ _) _ _
      have aB1_49 : pair0_region.sl.v1588 d L tab k r g1 g2 hR hin h4 = AccMath.accVec (rowF fl tab (wL L).val (2 * t1.val) (2 * k.val + 1)) (offF fl (wL L).val (2 * t1.val) (2 * k.val + 1)) 1 49 := by
        unfold pair0_region.sl.v1588; rw [aB1_48]
        exact acc_step d L fl tab (wL L).val (2 * t1.val) (2 * k.val + 1) 1 _ hRB ⟨48, by decide⟩ ⟨1, by decide⟩ 16#32 rfl _ hwB_48 _ (k1_off53_form _ _) _ _
      have aB1_50 : pair0_region.sl.v1622 d L tab k r g1 g2 hR hin h4 = AccMath.accVec (rowF fl tab (wL L).val (2 * t1.val) (2 * k.val + 1)) (offF fl (wL L).val (2 * t1.val) (2 * k.val + 1)) 1 50 := by
        unfold pair0_region.sl.v1622; rw [aB1_49]
        exact acc_step d L fl tab (wL L).val (2 * t1.val) (2 * k.val + 1) 1 _ hRB ⟨49, by decide⟩ ⟨1, by decide⟩ 16#32 rfl _ hwB_49 _ (k1_off54_form _ _) _ _
      have hPB1 : ∀ x : S1x1x16.Idx, pair0_region.sl.v1648 d L tab k r g1 g2 hR hin h4 x = Spec.bagPartial fl tab (128 * (wL L).val + 16 * (2 * t1.val) + (2 * k.val + 1)) (16 * 1 + (x 2).val) 50 := fun x => by
        unfold pair0_region.sl.v1648; rw [aB1_50]; exact payload_ok fl tab (wL L).val (2 * t1.val) (2 * k.val + 1) ⟨1, by decide⟩ _ x
      have aB2_0 : pair0_region.sl.v1561 = AccMath.accVec (rowF fl tab (wL L).val (2 * t1.val) (2 * k.val + 1)) (offF fl (wL L).val (2 * t1.val) (2 * k.val + 1)) 2 0 := acc_zero fl tab (wL L).val (2 * t1.val) (2 * k.val + 1) 2
      have aB2_1 : pair0_region.sl.v1691_3 d L tab k r g1 g2 hR hin h4 = AccMath.accVec (rowF fl tab (wL L).val (2 * t1.val) (2 * k.val + 1)) (offF fl (wL L).val (2 * t1.val) (2 * k.val + 1)) 2 1 := by
        unfold pair0_region.sl.v1691_3; rw [aB2_0]
        exact acc_step d L fl tab (wL L).val (2 * t1.val) (2 * k.val + 1) 1 _ hRB ⟨0, by decide⟩ ⟨2, by decide⟩ 32#32 rfl _ hwB_0 _ (k1_off36_form ⟨0, by decide⟩ _ _) _ _
      have aB2_2 : pair0_region.sl.v1727_3 d L tab k r g1 g2 hR hin h4 = AccMath.accVec (rowF fl tab (wL L).val (2 * t1.val) (2 * k.val + 1)) (offF fl (wL L).val (2 * t1.val) (2 * k.val + 1)) 2 2 := by
        unfold pair0_region.sl.v1727_3; rw [aB2_1]
        exact acc_step d L fl tab (wL L).val (2 * t1.val) (2 * k.val + 1) 1 _ hRB ⟨1, by decide⟩ ⟨2, by decide⟩ 32#32 rfl _ hwB_1 _ (k1_off37_form ⟨0, by decide⟩ _ _) _ _
      have aB2_3 : pair0_region.sl.v1763_3 d L tab k r g1 g2 hR hin h4 = AccMath.accVec (rowF fl tab (wL L).val (2 * t1.val) (2 * k.val + 1)) (offF fl (wL L).val (2 * t1.val) (2 * k.val + 1)) 2 3 := by
        unfold pair0_region.sl.v1763_3; rw [aB2_2]
        exact acc_step d L fl tab (wL L).val (2 * t1.val) (2 * k.val + 1) 1 _ hRB ⟨2, by decide⟩ ⟨2, by decide⟩ 32#32 rfl _ hwB_2 _ (k1_off38_form ⟨0, by decide⟩ _ _) _ _
      have aB2_4 : pair0_region.sl.v1799_3 d L tab k r g1 g2 hR hin h4 = AccMath.accVec (rowF fl tab (wL L).val (2 * t1.val) (2 * k.val + 1)) (offF fl (wL L).val (2 * t1.val) (2 * k.val + 1)) 2 4 := by
        unfold pair0_region.sl.v1799_3; rw [aB2_3]
        exact acc_step d L fl tab (wL L).val (2 * t1.val) (2 * k.val + 1) 1 _ hRB ⟨3, by decide⟩ ⟨2, by decide⟩ 32#32 rfl _ hwB_3 _ (k1_off39_form ⟨0, by decide⟩ _ _) _ _
      have aB2_5 : pair0_region.sl.v1835_3 d L tab k r g1 g2 hR hin h4 = AccMath.accVec (rowF fl tab (wL L).val (2 * t1.val) (2 * k.val + 1)) (offF fl (wL L).val (2 * t1.val) (2 * k.val + 1)) 2 5 := by
        unfold pair0_region.sl.v1835_3; rw [aB2_4]
        exact acc_step d L fl tab (wL L).val (2 * t1.val) (2 * k.val + 1) 1 _ hRB ⟨4, by decide⟩ ⟨2, by decide⟩ 32#32 rfl _ hwB_4 _ (k1_off40_form ⟨0, by decide⟩ _ _) _ _
      have aB2_6 : pair0_region.sl.v1871_3 d L tab k r g1 g2 hR hin h4 = AccMath.accVec (rowF fl tab (wL L).val (2 * t1.val) (2 * k.val + 1)) (offF fl (wL L).val (2 * t1.val) (2 * k.val + 1)) 2 6 := by
        unfold pair0_region.sl.v1871_3; rw [aB2_5]
        exact acc_step d L fl tab (wL L).val (2 * t1.val) (2 * k.val + 1) 1 _ hRB ⟨5, by decide⟩ ⟨2, by decide⟩ 32#32 rfl _ hwB_5 _ (k1_off41_form ⟨0, by decide⟩ _ _) _ _
      have aB2_7 : pair0_region.sl.v1907_3 d L tab k r g1 g2 hR hin h4 = AccMath.accVec (rowF fl tab (wL L).val (2 * t1.val) (2 * k.val + 1)) (offF fl (wL L).val (2 * t1.val) (2 * k.val + 1)) 2 7 := by
        unfold pair0_region.sl.v1907_3; rw [aB2_6]
        exact acc_step d L fl tab (wL L).val (2 * t1.val) (2 * k.val + 1) 1 _ hRB ⟨6, by decide⟩ ⟨2, by decide⟩ 32#32 rfl _ hwB_6 _ (k1_off42_form ⟨0, by decide⟩ _ _) _ _
      have aB2_8 : pair0_region.sl.v1943_3 d L tab k r g1 g2 hR hin h4 = AccMath.accVec (rowF fl tab (wL L).val (2 * t1.val) (2 * k.val + 1)) (offF fl (wL L).val (2 * t1.val) (2 * k.val + 1)) 2 8 := by
        unfold pair0_region.sl.v1943_3; rw [aB2_7]
        exact acc_step d L fl tab (wL L).val (2 * t1.val) (2 * k.val + 1) 1 _ hRB ⟨7, by decide⟩ ⟨2, by decide⟩ 32#32 rfl _ hwB_7 _ (k1_off43_form ⟨0, by decide⟩ _ _) _ _
      have aB2_9 : pair0_region.sl.v1979_3 d L tab k r g1 g2 hR hin h4 = AccMath.accVec (rowF fl tab (wL L).val (2 * t1.val) (2 * k.val + 1)) (offF fl (wL L).val (2 * t1.val) (2 * k.val + 1)) 2 9 := by
        unfold pair0_region.sl.v1979_3; rw [aB2_8]
        exact acc_step d L fl tab (wL L).val (2 * t1.val) (2 * k.val + 1) 1 _ hRB ⟨8, by decide⟩ ⟨2, by decide⟩ 32#32 rfl _ hwB_8 _ (k1_off44_form ⟨0, by decide⟩ _ _) _ _
      have aB2_10 : pair0_region.sl.v2015_3 d L tab k r g1 g2 hR hin h4 = AccMath.accVec (rowF fl tab (wL L).val (2 * t1.val) (2 * k.val + 1)) (offF fl (wL L).val (2 * t1.val) (2 * k.val + 1)) 2 10 := by
        unfold pair0_region.sl.v2015_3; rw [aB2_9]
        exact acc_step d L fl tab (wL L).val (2 * t1.val) (2 * k.val + 1) 1 _ hRB ⟨9, by decide⟩ ⟨2, by decide⟩ 32#32 rfl _ hwB_9 _ (k1_off45_form ⟨0, by decide⟩ _ _) _ _
      have aB2_11 : pair0_region.sl.v2051_3 d L tab k r g1 g2 hR hin h4 = AccMath.accVec (rowF fl tab (wL L).val (2 * t1.val) (2 * k.val + 1)) (offF fl (wL L).val (2 * t1.val) (2 * k.val + 1)) 2 11 := by
        unfold pair0_region.sl.v2051_3; rw [aB2_10]
        exact acc_step d L fl tab (wL L).val (2 * t1.val) (2 * k.val + 1) 1 _ hRB ⟨10, by decide⟩ ⟨2, by decide⟩ 32#32 rfl _ hwB_10 _ (k1_off46_form ⟨0, by decide⟩ _ _) _ _
      have aB2_12 : pair0_region.sl.v2087_3 d L tab k r g1 g2 hR hin h4 = AccMath.accVec (rowF fl tab (wL L).val (2 * t1.val) (2 * k.val + 1)) (offF fl (wL L).val (2 * t1.val) (2 * k.val + 1)) 2 12 := by
        unfold pair0_region.sl.v2087_3; rw [aB2_11]
        exact acc_step d L fl tab (wL L).val (2 * t1.val) (2 * k.val + 1) 1 _ hRB ⟨11, by decide⟩ ⟨2, by decide⟩ 32#32 rfl _ hwB_11 _ (k1_off47_form ⟨0, by decide⟩ _ _) _ _
      have aB2_13 : pair0_region.sl.v2123_3 d L tab k r g1 g2 hR hin h4 = AccMath.accVec (rowF fl tab (wL L).val (2 * t1.val) (2 * k.val + 1)) (offF fl (wL L).val (2 * t1.val) (2 * k.val + 1)) 2 13 := by
        unfold pair0_region.sl.v2123_3; rw [aB2_12]
        exact acc_step d L fl tab (wL L).val (2 * t1.val) (2 * k.val + 1) 1 _ hRB ⟨12, by decide⟩ ⟨2, by decide⟩ 32#32 rfl _ hwB_12 _ (k1_off48_form ⟨0, by decide⟩ _ _) _ _
      have aB2_14 : pair0_region.sl.v2159_3 d L tab k r g1 g2 hR hin h4 = AccMath.accVec (rowF fl tab (wL L).val (2 * t1.val) (2 * k.val + 1)) (offF fl (wL L).val (2 * t1.val) (2 * k.val + 1)) 2 14 := by
        unfold pair0_region.sl.v2159_3; rw [aB2_13]
        exact acc_step d L fl tab (wL L).val (2 * t1.val) (2 * k.val + 1) 1 _ hRB ⟨13, by decide⟩ ⟨2, by decide⟩ 32#32 rfl _ hwB_13 _ (k1_off49_form ⟨0, by decide⟩ _ _) _ _
      have aB2_15 : pair0_region.sl.v2195_3 d L tab k r g1 g2 hR hin h4 = AccMath.accVec (rowF fl tab (wL L).val (2 * t1.val) (2 * k.val + 1)) (offF fl (wL L).val (2 * t1.val) (2 * k.val + 1)) 2 15 := by
        unfold pair0_region.sl.v2195_3; rw [aB2_14]
        exact acc_step d L fl tab (wL L).val (2 * t1.val) (2 * k.val + 1) 1 _ hRB ⟨14, by decide⟩ ⟨2, by decide⟩ 32#32 rfl _ hwB_14 _ (k1_off50_form ⟨0, by decide⟩ _ _) _ _
      have aB2_16 : pair0_region.sl.v2231_3 d L tab k r g1 g2 hR hin h4 = AccMath.accVec (rowF fl tab (wL L).val (2 * t1.val) (2 * k.val + 1)) (offF fl (wL L).val (2 * t1.val) (2 * k.val + 1)) 2 16 := by
        unfold pair0_region.sl.v2231_3; rw [aB2_15]
        exact acc_step d L fl tab (wL L).val (2 * t1.val) (2 * k.val + 1) 1 _ hRB ⟨15, by decide⟩ ⟨2, by decide⟩ 32#32 rfl _ hwB_15 _ (k1_off51_form ⟨0, by decide⟩ _ _) _ _
      have aB2_17 : pair0_region.sl.v1691_4 d L tab k r g1 g2 hR hin h4 = AccMath.accVec (rowF fl tab (wL L).val (2 * t1.val) (2 * k.val + 1)) (offF fl (wL L).val (2 * t1.val) (2 * k.val + 1)) 2 17 := by
        unfold pair0_region.sl.v1691_4; rw [aB2_16]
        exact acc_step d L fl tab (wL L).val (2 * t1.val) (2 * k.val + 1) 1 _ hRB ⟨16, by decide⟩ ⟨2, by decide⟩ 32#32 rfl _ hwB_16 _ (k1_off36_form ⟨1, by decide⟩ _ _) _ _
      have aB2_18 : pair0_region.sl.v1727_4 d L tab k r g1 g2 hR hin h4 = AccMath.accVec (rowF fl tab (wL L).val (2 * t1.val) (2 * k.val + 1)) (offF fl (wL L).val (2 * t1.val) (2 * k.val + 1)) 2 18 := by
        unfold pair0_region.sl.v1727_4; rw [aB2_17]
        exact acc_step d L fl tab (wL L).val (2 * t1.val) (2 * k.val + 1) 1 _ hRB ⟨17, by decide⟩ ⟨2, by decide⟩ 32#32 rfl _ hwB_17 _ (k1_off37_form ⟨1, by decide⟩ _ _) _ _
      have aB2_19 : pair0_region.sl.v1763_4 d L tab k r g1 g2 hR hin h4 = AccMath.accVec (rowF fl tab (wL L).val (2 * t1.val) (2 * k.val + 1)) (offF fl (wL L).val (2 * t1.val) (2 * k.val + 1)) 2 19 := by
        unfold pair0_region.sl.v1763_4; rw [aB2_18]
        exact acc_step d L fl tab (wL L).val (2 * t1.val) (2 * k.val + 1) 1 _ hRB ⟨18, by decide⟩ ⟨2, by decide⟩ 32#32 rfl _ hwB_18 _ (k1_off38_form ⟨1, by decide⟩ _ _) _ _
      have aB2_20 : pair0_region.sl.v1799_4 d L tab k r g1 g2 hR hin h4 = AccMath.accVec (rowF fl tab (wL L).val (2 * t1.val) (2 * k.val + 1)) (offF fl (wL L).val (2 * t1.val) (2 * k.val + 1)) 2 20 := by
        unfold pair0_region.sl.v1799_4; rw [aB2_19]
        exact acc_step d L fl tab (wL L).val (2 * t1.val) (2 * k.val + 1) 1 _ hRB ⟨19, by decide⟩ ⟨2, by decide⟩ 32#32 rfl _ hwB_19 _ (k1_off39_form ⟨1, by decide⟩ _ _) _ _
      have aB2_21 : pair0_region.sl.v1835_4 d L tab k r g1 g2 hR hin h4 = AccMath.accVec (rowF fl tab (wL L).val (2 * t1.val) (2 * k.val + 1)) (offF fl (wL L).val (2 * t1.val) (2 * k.val + 1)) 2 21 := by
        unfold pair0_region.sl.v1835_4; rw [aB2_20]
        exact acc_step d L fl tab (wL L).val (2 * t1.val) (2 * k.val + 1) 1 _ hRB ⟨20, by decide⟩ ⟨2, by decide⟩ 32#32 rfl _ hwB_20 _ (k1_off40_form ⟨1, by decide⟩ _ _) _ _
      have aB2_22 : pair0_region.sl.v1871_4 d L tab k r g1 g2 hR hin h4 = AccMath.accVec (rowF fl tab (wL L).val (2 * t1.val) (2 * k.val + 1)) (offF fl (wL L).val (2 * t1.val) (2 * k.val + 1)) 2 22 := by
        unfold pair0_region.sl.v1871_4; rw [aB2_21]
        exact acc_step d L fl tab (wL L).val (2 * t1.val) (2 * k.val + 1) 1 _ hRB ⟨21, by decide⟩ ⟨2, by decide⟩ 32#32 rfl _ hwB_21 _ (k1_off41_form ⟨1, by decide⟩ _ _) _ _
      have aB2_23 : pair0_region.sl.v1907_4 d L tab k r g1 g2 hR hin h4 = AccMath.accVec (rowF fl tab (wL L).val (2 * t1.val) (2 * k.val + 1)) (offF fl (wL L).val (2 * t1.val) (2 * k.val + 1)) 2 23 := by
        unfold pair0_region.sl.v1907_4; rw [aB2_22]
        exact acc_step d L fl tab (wL L).val (2 * t1.val) (2 * k.val + 1) 1 _ hRB ⟨22, by decide⟩ ⟨2, by decide⟩ 32#32 rfl _ hwB_22 _ (k1_off42_form ⟨1, by decide⟩ _ _) _ _
      have aB2_24 : pair0_region.sl.v1943_4 d L tab k r g1 g2 hR hin h4 = AccMath.accVec (rowF fl tab (wL L).val (2 * t1.val) (2 * k.val + 1)) (offF fl (wL L).val (2 * t1.val) (2 * k.val + 1)) 2 24 := by
        unfold pair0_region.sl.v1943_4; rw [aB2_23]
        exact acc_step d L fl tab (wL L).val (2 * t1.val) (2 * k.val + 1) 1 _ hRB ⟨23, by decide⟩ ⟨2, by decide⟩ 32#32 rfl _ hwB_23 _ (k1_off43_form ⟨1, by decide⟩ _ _) _ _
      have aB2_25 : pair0_region.sl.v1979_4 d L tab k r g1 g2 hR hin h4 = AccMath.accVec (rowF fl tab (wL L).val (2 * t1.val) (2 * k.val + 1)) (offF fl (wL L).val (2 * t1.val) (2 * k.val + 1)) 2 25 := by
        unfold pair0_region.sl.v1979_4; rw [aB2_24]
        exact acc_step d L fl tab (wL L).val (2 * t1.val) (2 * k.val + 1) 1 _ hRB ⟨24, by decide⟩ ⟨2, by decide⟩ 32#32 rfl _ hwB_24 _ (k1_off44_form ⟨1, by decide⟩ _ _) _ _
      have aB2_26 : pair0_region.sl.v2015_4 d L tab k r g1 g2 hR hin h4 = AccMath.accVec (rowF fl tab (wL L).val (2 * t1.val) (2 * k.val + 1)) (offF fl (wL L).val (2 * t1.val) (2 * k.val + 1)) 2 26 := by
        unfold pair0_region.sl.v2015_4; rw [aB2_25]
        exact acc_step d L fl tab (wL L).val (2 * t1.val) (2 * k.val + 1) 1 _ hRB ⟨25, by decide⟩ ⟨2, by decide⟩ 32#32 rfl _ hwB_25 _ (k1_off45_form ⟨1, by decide⟩ _ _) _ _
      have aB2_27 : pair0_region.sl.v2051_4 d L tab k r g1 g2 hR hin h4 = AccMath.accVec (rowF fl tab (wL L).val (2 * t1.val) (2 * k.val + 1)) (offF fl (wL L).val (2 * t1.val) (2 * k.val + 1)) 2 27 := by
        unfold pair0_region.sl.v2051_4; rw [aB2_26]
        exact acc_step d L fl tab (wL L).val (2 * t1.val) (2 * k.val + 1) 1 _ hRB ⟨26, by decide⟩ ⟨2, by decide⟩ 32#32 rfl _ hwB_26 _ (k1_off46_form ⟨1, by decide⟩ _ _) _ _
      have aB2_28 : pair0_region.sl.v2087_4 d L tab k r g1 g2 hR hin h4 = AccMath.accVec (rowF fl tab (wL L).val (2 * t1.val) (2 * k.val + 1)) (offF fl (wL L).val (2 * t1.val) (2 * k.val + 1)) 2 28 := by
        unfold pair0_region.sl.v2087_4; rw [aB2_27]
        exact acc_step d L fl tab (wL L).val (2 * t1.val) (2 * k.val + 1) 1 _ hRB ⟨27, by decide⟩ ⟨2, by decide⟩ 32#32 rfl _ hwB_27 _ (k1_off47_form ⟨1, by decide⟩ _ _) _ _
      have aB2_29 : pair0_region.sl.v2123_4 d L tab k r g1 g2 hR hin h4 = AccMath.accVec (rowF fl tab (wL L).val (2 * t1.val) (2 * k.val + 1)) (offF fl (wL L).val (2 * t1.val) (2 * k.val + 1)) 2 29 := by
        unfold pair0_region.sl.v2123_4; rw [aB2_28]
        exact acc_step d L fl tab (wL L).val (2 * t1.val) (2 * k.val + 1) 1 _ hRB ⟨28, by decide⟩ ⟨2, by decide⟩ 32#32 rfl _ hwB_28 _ (k1_off48_form ⟨1, by decide⟩ _ _) _ _
      have aB2_30 : pair0_region.sl.v2159_4 d L tab k r g1 g2 hR hin h4 = AccMath.accVec (rowF fl tab (wL L).val (2 * t1.val) (2 * k.val + 1)) (offF fl (wL L).val (2 * t1.val) (2 * k.val + 1)) 2 30 := by
        unfold pair0_region.sl.v2159_4; rw [aB2_29]
        exact acc_step d L fl tab (wL L).val (2 * t1.val) (2 * k.val + 1) 1 _ hRB ⟨29, by decide⟩ ⟨2, by decide⟩ 32#32 rfl _ hwB_29 _ (k1_off49_form ⟨1, by decide⟩ _ _) _ _
      have aB2_31 : pair0_region.sl.v2195_4 d L tab k r g1 g2 hR hin h4 = AccMath.accVec (rowF fl tab (wL L).val (2 * t1.val) (2 * k.val + 1)) (offF fl (wL L).val (2 * t1.val) (2 * k.val + 1)) 2 31 := by
        unfold pair0_region.sl.v2195_4; rw [aB2_30]
        exact acc_step d L fl tab (wL L).val (2 * t1.val) (2 * k.val + 1) 1 _ hRB ⟨30, by decide⟩ ⟨2, by decide⟩ 32#32 rfl _ hwB_30 _ (k1_off50_form ⟨1, by decide⟩ _ _) _ _
      have aB2_32 : pair0_region.sl.v2231_4 d L tab k r g1 g2 hR hin h4 = AccMath.accVec (rowF fl tab (wL L).val (2 * t1.val) (2 * k.val + 1)) (offF fl (wL L).val (2 * t1.val) (2 * k.val + 1)) 2 32 := by
        unfold pair0_region.sl.v2231_4; rw [aB2_31]
        exact acc_step d L fl tab (wL L).val (2 * t1.val) (2 * k.val + 1) 1 _ hRB ⟨31, by decide⟩ ⟨2, by decide⟩ 32#32 rfl _ hwB_31 _ (k1_off51_form ⟨1, by decide⟩ _ _) _ _
      have aB2_33 : pair0_region.sl.v1691_5 d L tab k r g1 g2 hR hin h4 = AccMath.accVec (rowF fl tab (wL L).val (2 * t1.val) (2 * k.val + 1)) (offF fl (wL L).val (2 * t1.val) (2 * k.val + 1)) 2 33 := by
        unfold pair0_region.sl.v1691_5; rw [aB2_32]
        exact acc_step d L fl tab (wL L).val (2 * t1.val) (2 * k.val + 1) 1 _ hRB ⟨32, by decide⟩ ⟨2, by decide⟩ 32#32 rfl _ hwB_32 _ (k1_off36_form ⟨2, by decide⟩ _ _) _ _
      have aB2_34 : pair0_region.sl.v1727_5 d L tab k r g1 g2 hR hin h4 = AccMath.accVec (rowF fl tab (wL L).val (2 * t1.val) (2 * k.val + 1)) (offF fl (wL L).val (2 * t1.val) (2 * k.val + 1)) 2 34 := by
        unfold pair0_region.sl.v1727_5; rw [aB2_33]
        exact acc_step d L fl tab (wL L).val (2 * t1.val) (2 * k.val + 1) 1 _ hRB ⟨33, by decide⟩ ⟨2, by decide⟩ 32#32 rfl _ hwB_33 _ (k1_off37_form ⟨2, by decide⟩ _ _) _ _
      have aB2_35 : pair0_region.sl.v1763_5 d L tab k r g1 g2 hR hin h4 = AccMath.accVec (rowF fl tab (wL L).val (2 * t1.val) (2 * k.val + 1)) (offF fl (wL L).val (2 * t1.val) (2 * k.val + 1)) 2 35 := by
        unfold pair0_region.sl.v1763_5; rw [aB2_34]
        exact acc_step d L fl tab (wL L).val (2 * t1.val) (2 * k.val + 1) 1 _ hRB ⟨34, by decide⟩ ⟨2, by decide⟩ 32#32 rfl _ hwB_34 _ (k1_off38_form ⟨2, by decide⟩ _ _) _ _
      have aB2_36 : pair0_region.sl.v1799_5 d L tab k r g1 g2 hR hin h4 = AccMath.accVec (rowF fl tab (wL L).val (2 * t1.val) (2 * k.val + 1)) (offF fl (wL L).val (2 * t1.val) (2 * k.val + 1)) 2 36 := by
        unfold pair0_region.sl.v1799_5; rw [aB2_35]
        exact acc_step d L fl tab (wL L).val (2 * t1.val) (2 * k.val + 1) 1 _ hRB ⟨35, by decide⟩ ⟨2, by decide⟩ 32#32 rfl _ hwB_35 _ (k1_off39_form ⟨2, by decide⟩ _ _) _ _
      have aB2_37 : pair0_region.sl.v1835_5 d L tab k r g1 g2 hR hin h4 = AccMath.accVec (rowF fl tab (wL L).val (2 * t1.val) (2 * k.val + 1)) (offF fl (wL L).val (2 * t1.val) (2 * k.val + 1)) 2 37 := by
        unfold pair0_region.sl.v1835_5; rw [aB2_36]
        exact acc_step d L fl tab (wL L).val (2 * t1.val) (2 * k.val + 1) 1 _ hRB ⟨36, by decide⟩ ⟨2, by decide⟩ 32#32 rfl _ hwB_36 _ (k1_off40_form ⟨2, by decide⟩ _ _) _ _
      have aB2_38 : pair0_region.sl.v1871_5 d L tab k r g1 g2 hR hin h4 = AccMath.accVec (rowF fl tab (wL L).val (2 * t1.val) (2 * k.val + 1)) (offF fl (wL L).val (2 * t1.val) (2 * k.val + 1)) 2 38 := by
        unfold pair0_region.sl.v1871_5; rw [aB2_37]
        exact acc_step d L fl tab (wL L).val (2 * t1.val) (2 * k.val + 1) 1 _ hRB ⟨37, by decide⟩ ⟨2, by decide⟩ 32#32 rfl _ hwB_37 _ (k1_off41_form ⟨2, by decide⟩ _ _) _ _
      have aB2_39 : pair0_region.sl.v1907_5 d L tab k r g1 g2 hR hin h4 = AccMath.accVec (rowF fl tab (wL L).val (2 * t1.val) (2 * k.val + 1)) (offF fl (wL L).val (2 * t1.val) (2 * k.val + 1)) 2 39 := by
        unfold pair0_region.sl.v1907_5; rw [aB2_38]
        exact acc_step d L fl tab (wL L).val (2 * t1.val) (2 * k.val + 1) 1 _ hRB ⟨38, by decide⟩ ⟨2, by decide⟩ 32#32 rfl _ hwB_38 _ (k1_off42_form ⟨2, by decide⟩ _ _) _ _
      have aB2_40 : pair0_region.sl.v1943_5 d L tab k r g1 g2 hR hin h4 = AccMath.accVec (rowF fl tab (wL L).val (2 * t1.val) (2 * k.val + 1)) (offF fl (wL L).val (2 * t1.val) (2 * k.val + 1)) 2 40 := by
        unfold pair0_region.sl.v1943_5; rw [aB2_39]
        exact acc_step d L fl tab (wL L).val (2 * t1.val) (2 * k.val + 1) 1 _ hRB ⟨39, by decide⟩ ⟨2, by decide⟩ 32#32 rfl _ hwB_39 _ (k1_off43_form ⟨2, by decide⟩ _ _) _ _
      have aB2_41 : pair0_region.sl.v1979_5 d L tab k r g1 g2 hR hin h4 = AccMath.accVec (rowF fl tab (wL L).val (2 * t1.val) (2 * k.val + 1)) (offF fl (wL L).val (2 * t1.val) (2 * k.val + 1)) 2 41 := by
        unfold pair0_region.sl.v1979_5; rw [aB2_40]
        exact acc_step d L fl tab (wL L).val (2 * t1.val) (2 * k.val + 1) 1 _ hRB ⟨40, by decide⟩ ⟨2, by decide⟩ 32#32 rfl _ hwB_40 _ (k1_off44_form ⟨2, by decide⟩ _ _) _ _
      have aB2_42 : pair0_region.sl.v2015_5 d L tab k r g1 g2 hR hin h4 = AccMath.accVec (rowF fl tab (wL L).val (2 * t1.val) (2 * k.val + 1)) (offF fl (wL L).val (2 * t1.val) (2 * k.val + 1)) 2 42 := by
        unfold pair0_region.sl.v2015_5; rw [aB2_41]
        exact acc_step d L fl tab (wL L).val (2 * t1.val) (2 * k.val + 1) 1 _ hRB ⟨41, by decide⟩ ⟨2, by decide⟩ 32#32 rfl _ hwB_41 _ (k1_off45_form ⟨2, by decide⟩ _ _) _ _
      have aB2_43 : pair0_region.sl.v2051_5 d L tab k r g1 g2 hR hin h4 = AccMath.accVec (rowF fl tab (wL L).val (2 * t1.val) (2 * k.val + 1)) (offF fl (wL L).val (2 * t1.val) (2 * k.val + 1)) 2 43 := by
        unfold pair0_region.sl.v2051_5; rw [aB2_42]
        exact acc_step d L fl tab (wL L).val (2 * t1.val) (2 * k.val + 1) 1 _ hRB ⟨42, by decide⟩ ⟨2, by decide⟩ 32#32 rfl _ hwB_42 _ (k1_off46_form ⟨2, by decide⟩ _ _) _ _
      have aB2_44 : pair0_region.sl.v2087_5 d L tab k r g1 g2 hR hin h4 = AccMath.accVec (rowF fl tab (wL L).val (2 * t1.val) (2 * k.val + 1)) (offF fl (wL L).val (2 * t1.val) (2 * k.val + 1)) 2 44 := by
        unfold pair0_region.sl.v2087_5; rw [aB2_43]
        exact acc_step d L fl tab (wL L).val (2 * t1.val) (2 * k.val + 1) 1 _ hRB ⟨43, by decide⟩ ⟨2, by decide⟩ 32#32 rfl _ hwB_43 _ (k1_off47_form ⟨2, by decide⟩ _ _) _ _
      have aB2_45 : pair0_region.sl.v2123_5 d L tab k r g1 g2 hR hin h4 = AccMath.accVec (rowF fl tab (wL L).val (2 * t1.val) (2 * k.val + 1)) (offF fl (wL L).val (2 * t1.val) (2 * k.val + 1)) 2 45 := by
        unfold pair0_region.sl.v2123_5; rw [aB2_44]
        exact acc_step d L fl tab (wL L).val (2 * t1.val) (2 * k.val + 1) 1 _ hRB ⟨44, by decide⟩ ⟨2, by decide⟩ 32#32 rfl _ hwB_44 _ (k1_off48_form ⟨2, by decide⟩ _ _) _ _
      have aB2_46 : pair0_region.sl.v2159_5 d L tab k r g1 g2 hR hin h4 = AccMath.accVec (rowF fl tab (wL L).val (2 * t1.val) (2 * k.val + 1)) (offF fl (wL L).val (2 * t1.val) (2 * k.val + 1)) 2 46 := by
        unfold pair0_region.sl.v2159_5; rw [aB2_45]
        exact acc_step d L fl tab (wL L).val (2 * t1.val) (2 * k.val + 1) 1 _ hRB ⟨45, by decide⟩ ⟨2, by decide⟩ 32#32 rfl _ hwB_45 _ (k1_off49_form ⟨2, by decide⟩ _ _) _ _
      have aB2_47 : pair0_region.sl.v2195_5 d L tab k r g1 g2 hR hin h4 = AccMath.accVec (rowF fl tab (wL L).val (2 * t1.val) (2 * k.val + 1)) (offF fl (wL L).val (2 * t1.val) (2 * k.val + 1)) 2 47 := by
        unfold pair0_region.sl.v2195_5; rw [aB2_46]
        exact acc_step d L fl tab (wL L).val (2 * t1.val) (2 * k.val + 1) 1 _ hRB ⟨46, by decide⟩ ⟨2, by decide⟩ 32#32 rfl _ hwB_46 _ (k1_off50_form ⟨2, by decide⟩ _ _) _ _
      have aB2_48 : pair0_region.sl.v2231_5 d L tab k r g1 g2 hR hin h4 = AccMath.accVec (rowF fl tab (wL L).val (2 * t1.val) (2 * k.val + 1)) (offF fl (wL L).val (2 * t1.val) (2 * k.val + 1)) 2 48 := by
        unfold pair0_region.sl.v2231_5; rw [aB2_47]
        exact acc_step d L fl tab (wL L).val (2 * t1.val) (2 * k.val + 1) 1 _ hRB ⟨47, by decide⟩ ⟨2, by decide⟩ 32#32 rfl _ hwB_47 _ (k1_off51_form ⟨2, by decide⟩ _ _) _ _
      have aB2_49 : pair0_region.sl.v1596 d L tab k r g1 g2 hR hin h4 = AccMath.accVec (rowF fl tab (wL L).val (2 * t1.val) (2 * k.val + 1)) (offF fl (wL L).val (2 * t1.val) (2 * k.val + 1)) 2 49 := by
        unfold pair0_region.sl.v1596; rw [aB2_48]
        exact acc_step d L fl tab (wL L).val (2 * t1.val) (2 * k.val + 1) 1 _ hRB ⟨48, by decide⟩ ⟨2, by decide⟩ 32#32 rfl _ hwB_48 _ (k1_off53_form _ _) _ _
      have aB2_50 : pair0_region.sl.v1630 d L tab k r g1 g2 hR hin h4 = AccMath.accVec (rowF fl tab (wL L).val (2 * t1.val) (2 * k.val + 1)) (offF fl (wL L).val (2 * t1.val) (2 * k.val + 1)) 2 50 := by
        unfold pair0_region.sl.v1630; rw [aB2_49]
        exact acc_step d L fl tab (wL L).val (2 * t1.val) (2 * k.val + 1) 1 _ hRB ⟨49, by decide⟩ ⟨2, by decide⟩ 32#32 rfl _ hwB_49 _ (k1_off54_form _ _) _ _
      have hPB2 : ∀ x : S1x1x16.Idx, pair0_region.sl.v1653 d L tab k r g1 g2 hR hin h4 x = Spec.bagPartial fl tab (128 * (wL L).val + 16 * (2 * t1.val) + (2 * k.val + 1)) (16 * 2 + (x 2).val) 50 := fun x => by
        unfold pair0_region.sl.v1653; rw [aB2_50]; exact payload_ok fl tab (wL L).val (2 * t1.val) (2 * k.val + 1) ⟨2, by decide⟩ _ x
      have aB3_0 : pair0_region.sl.v1561 = AccMath.accVec (rowF fl tab (wL L).val (2 * t1.val) (2 * k.val + 1)) (offF fl (wL L).val (2 * t1.val) (2 * k.val + 1)) 3 0 := acc_zero fl tab (wL L).val (2 * t1.val) (2 * k.val + 1) 3
      have aB3_1 : pair0_region.sl.v1699_3 d L tab k r g1 g2 hR hin h4 = AccMath.accVec (rowF fl tab (wL L).val (2 * t1.val) (2 * k.val + 1)) (offF fl (wL L).val (2 * t1.val) (2 * k.val + 1)) 3 1 := by
        unfold pair0_region.sl.v1699_3; rw [aB3_0]
        exact acc_step d L fl tab (wL L).val (2 * t1.val) (2 * k.val + 1) 1 _ hRB ⟨0, by decide⟩ ⟨3, by decide⟩ 48#32 rfl _ hwB_0 _ (k1_off36_form ⟨0, by decide⟩ _ _) _ _
      have aB3_2 : pair0_region.sl.v1735_3 d L tab k r g1 g2 hR hin h4 = AccMath.accVec (rowF fl tab (wL L).val (2 * t1.val) (2 * k.val + 1)) (offF fl (wL L).val (2 * t1.val) (2 * k.val + 1)) 3 2 := by
        unfold pair0_region.sl.v1735_3; rw [aB3_1]
        exact acc_step d L fl tab (wL L).val (2 * t1.val) (2 * k.val + 1) 1 _ hRB ⟨1, by decide⟩ ⟨3, by decide⟩ 48#32 rfl _ hwB_1 _ (k1_off37_form ⟨0, by decide⟩ _ _) _ _
      have aB3_3 : pair0_region.sl.v1771_3 d L tab k r g1 g2 hR hin h4 = AccMath.accVec (rowF fl tab (wL L).val (2 * t1.val) (2 * k.val + 1)) (offF fl (wL L).val (2 * t1.val) (2 * k.val + 1)) 3 3 := by
        unfold pair0_region.sl.v1771_3; rw [aB3_2]
        exact acc_step d L fl tab (wL L).val (2 * t1.val) (2 * k.val + 1) 1 _ hRB ⟨2, by decide⟩ ⟨3, by decide⟩ 48#32 rfl _ hwB_2 _ (k1_off38_form ⟨0, by decide⟩ _ _) _ _
      have aB3_4 : pair0_region.sl.v1807_3 d L tab k r g1 g2 hR hin h4 = AccMath.accVec (rowF fl tab (wL L).val (2 * t1.val) (2 * k.val + 1)) (offF fl (wL L).val (2 * t1.val) (2 * k.val + 1)) 3 4 := by
        unfold pair0_region.sl.v1807_3; rw [aB3_3]
        exact acc_step d L fl tab (wL L).val (2 * t1.val) (2 * k.val + 1) 1 _ hRB ⟨3, by decide⟩ ⟨3, by decide⟩ 48#32 rfl _ hwB_3 _ (k1_off39_form ⟨0, by decide⟩ _ _) _ _
      have aB3_5 : pair0_region.sl.v1843_3 d L tab k r g1 g2 hR hin h4 = AccMath.accVec (rowF fl tab (wL L).val (2 * t1.val) (2 * k.val + 1)) (offF fl (wL L).val (2 * t1.val) (2 * k.val + 1)) 3 5 := by
        unfold pair0_region.sl.v1843_3; rw [aB3_4]
        exact acc_step d L fl tab (wL L).val (2 * t1.val) (2 * k.val + 1) 1 _ hRB ⟨4, by decide⟩ ⟨3, by decide⟩ 48#32 rfl _ hwB_4 _ (k1_off40_form ⟨0, by decide⟩ _ _) _ _
      have aB3_6 : pair0_region.sl.v1879_3 d L tab k r g1 g2 hR hin h4 = AccMath.accVec (rowF fl tab (wL L).val (2 * t1.val) (2 * k.val + 1)) (offF fl (wL L).val (2 * t1.val) (2 * k.val + 1)) 3 6 := by
        unfold pair0_region.sl.v1879_3; rw [aB3_5]
        exact acc_step d L fl tab (wL L).val (2 * t1.val) (2 * k.val + 1) 1 _ hRB ⟨5, by decide⟩ ⟨3, by decide⟩ 48#32 rfl _ hwB_5 _ (k1_off41_form ⟨0, by decide⟩ _ _) _ _
      have aB3_7 : pair0_region.sl.v1915_3 d L tab k r g1 g2 hR hin h4 = AccMath.accVec (rowF fl tab (wL L).val (2 * t1.val) (2 * k.val + 1)) (offF fl (wL L).val (2 * t1.val) (2 * k.val + 1)) 3 7 := by
        unfold pair0_region.sl.v1915_3; rw [aB3_6]
        exact acc_step d L fl tab (wL L).val (2 * t1.val) (2 * k.val + 1) 1 _ hRB ⟨6, by decide⟩ ⟨3, by decide⟩ 48#32 rfl _ hwB_6 _ (k1_off42_form ⟨0, by decide⟩ _ _) _ _
      have aB3_8 : pair0_region.sl.v1951_3 d L tab k r g1 g2 hR hin h4 = AccMath.accVec (rowF fl tab (wL L).val (2 * t1.val) (2 * k.val + 1)) (offF fl (wL L).val (2 * t1.val) (2 * k.val + 1)) 3 8 := by
        unfold pair0_region.sl.v1951_3; rw [aB3_7]
        exact acc_step d L fl tab (wL L).val (2 * t1.val) (2 * k.val + 1) 1 _ hRB ⟨7, by decide⟩ ⟨3, by decide⟩ 48#32 rfl _ hwB_7 _ (k1_off43_form ⟨0, by decide⟩ _ _) _ _
      have aB3_9 : pair0_region.sl.v1987_3 d L tab k r g1 g2 hR hin h4 = AccMath.accVec (rowF fl tab (wL L).val (2 * t1.val) (2 * k.val + 1)) (offF fl (wL L).val (2 * t1.val) (2 * k.val + 1)) 3 9 := by
        unfold pair0_region.sl.v1987_3; rw [aB3_8]
        exact acc_step d L fl tab (wL L).val (2 * t1.val) (2 * k.val + 1) 1 _ hRB ⟨8, by decide⟩ ⟨3, by decide⟩ 48#32 rfl _ hwB_8 _ (k1_off44_form ⟨0, by decide⟩ _ _) _ _
      have aB3_10 : pair0_region.sl.v2023_3 d L tab k r g1 g2 hR hin h4 = AccMath.accVec (rowF fl tab (wL L).val (2 * t1.val) (2 * k.val + 1)) (offF fl (wL L).val (2 * t1.val) (2 * k.val + 1)) 3 10 := by
        unfold pair0_region.sl.v2023_3; rw [aB3_9]
        exact acc_step d L fl tab (wL L).val (2 * t1.val) (2 * k.val + 1) 1 _ hRB ⟨9, by decide⟩ ⟨3, by decide⟩ 48#32 rfl _ hwB_9 _ (k1_off45_form ⟨0, by decide⟩ _ _) _ _
      have aB3_11 : pair0_region.sl.v2059_3 d L tab k r g1 g2 hR hin h4 = AccMath.accVec (rowF fl tab (wL L).val (2 * t1.val) (2 * k.val + 1)) (offF fl (wL L).val (2 * t1.val) (2 * k.val + 1)) 3 11 := by
        unfold pair0_region.sl.v2059_3; rw [aB3_10]
        exact acc_step d L fl tab (wL L).val (2 * t1.val) (2 * k.val + 1) 1 _ hRB ⟨10, by decide⟩ ⟨3, by decide⟩ 48#32 rfl _ hwB_10 _ (k1_off46_form ⟨0, by decide⟩ _ _) _ _
      have aB3_12 : pair0_region.sl.v2095_3 d L tab k r g1 g2 hR hin h4 = AccMath.accVec (rowF fl tab (wL L).val (2 * t1.val) (2 * k.val + 1)) (offF fl (wL L).val (2 * t1.val) (2 * k.val + 1)) 3 12 := by
        unfold pair0_region.sl.v2095_3; rw [aB3_11]
        exact acc_step d L fl tab (wL L).val (2 * t1.val) (2 * k.val + 1) 1 _ hRB ⟨11, by decide⟩ ⟨3, by decide⟩ 48#32 rfl _ hwB_11 _ (k1_off47_form ⟨0, by decide⟩ _ _) _ _
      have aB3_13 : pair0_region.sl.v2131_3 d L tab k r g1 g2 hR hin h4 = AccMath.accVec (rowF fl tab (wL L).val (2 * t1.val) (2 * k.val + 1)) (offF fl (wL L).val (2 * t1.val) (2 * k.val + 1)) 3 13 := by
        unfold pair0_region.sl.v2131_3; rw [aB3_12]
        exact acc_step d L fl tab (wL L).val (2 * t1.val) (2 * k.val + 1) 1 _ hRB ⟨12, by decide⟩ ⟨3, by decide⟩ 48#32 rfl _ hwB_12 _ (k1_off48_form ⟨0, by decide⟩ _ _) _ _
      have aB3_14 : pair0_region.sl.v2167_3 d L tab k r g1 g2 hR hin h4 = AccMath.accVec (rowF fl tab (wL L).val (2 * t1.val) (2 * k.val + 1)) (offF fl (wL L).val (2 * t1.val) (2 * k.val + 1)) 3 14 := by
        unfold pair0_region.sl.v2167_3; rw [aB3_13]
        exact acc_step d L fl tab (wL L).val (2 * t1.val) (2 * k.val + 1) 1 _ hRB ⟨13, by decide⟩ ⟨3, by decide⟩ 48#32 rfl _ hwB_13 _ (k1_off49_form ⟨0, by decide⟩ _ _) _ _
      have aB3_15 : pair0_region.sl.v2203_3 d L tab k r g1 g2 hR hin h4 = AccMath.accVec (rowF fl tab (wL L).val (2 * t1.val) (2 * k.val + 1)) (offF fl (wL L).val (2 * t1.val) (2 * k.val + 1)) 3 15 := by
        unfold pair0_region.sl.v2203_3; rw [aB3_14]
        exact acc_step d L fl tab (wL L).val (2 * t1.val) (2 * k.val + 1) 1 _ hRB ⟨14, by decide⟩ ⟨3, by decide⟩ 48#32 rfl _ hwB_14 _ (k1_off50_form ⟨0, by decide⟩ _ _) _ _
      have aB3_16 : pair0_region.sl.v2239_3 d L tab k r g1 g2 hR hin h4 = AccMath.accVec (rowF fl tab (wL L).val (2 * t1.val) (2 * k.val + 1)) (offF fl (wL L).val (2 * t1.val) (2 * k.val + 1)) 3 16 := by
        unfold pair0_region.sl.v2239_3; rw [aB3_15]
        exact acc_step d L fl tab (wL L).val (2 * t1.val) (2 * k.val + 1) 1 _ hRB ⟨15, by decide⟩ ⟨3, by decide⟩ 48#32 rfl _ hwB_15 _ (k1_off51_form ⟨0, by decide⟩ _ _) _ _
      have aB3_17 : pair0_region.sl.v1699_4 d L tab k r g1 g2 hR hin h4 = AccMath.accVec (rowF fl tab (wL L).val (2 * t1.val) (2 * k.val + 1)) (offF fl (wL L).val (2 * t1.val) (2 * k.val + 1)) 3 17 := by
        unfold pair0_region.sl.v1699_4; rw [aB3_16]
        exact acc_step d L fl tab (wL L).val (2 * t1.val) (2 * k.val + 1) 1 _ hRB ⟨16, by decide⟩ ⟨3, by decide⟩ 48#32 rfl _ hwB_16 _ (k1_off36_form ⟨1, by decide⟩ _ _) _ _
      have aB3_18 : pair0_region.sl.v1735_4 d L tab k r g1 g2 hR hin h4 = AccMath.accVec (rowF fl tab (wL L).val (2 * t1.val) (2 * k.val + 1)) (offF fl (wL L).val (2 * t1.val) (2 * k.val + 1)) 3 18 := by
        unfold pair0_region.sl.v1735_4; rw [aB3_17]
        exact acc_step d L fl tab (wL L).val (2 * t1.val) (2 * k.val + 1) 1 _ hRB ⟨17, by decide⟩ ⟨3, by decide⟩ 48#32 rfl _ hwB_17 _ (k1_off37_form ⟨1, by decide⟩ _ _) _ _
      have aB3_19 : pair0_region.sl.v1771_4 d L tab k r g1 g2 hR hin h4 = AccMath.accVec (rowF fl tab (wL L).val (2 * t1.val) (2 * k.val + 1)) (offF fl (wL L).val (2 * t1.val) (2 * k.val + 1)) 3 19 := by
        unfold pair0_region.sl.v1771_4; rw [aB3_18]
        exact acc_step d L fl tab (wL L).val (2 * t1.val) (2 * k.val + 1) 1 _ hRB ⟨18, by decide⟩ ⟨3, by decide⟩ 48#32 rfl _ hwB_18 _ (k1_off38_form ⟨1, by decide⟩ _ _) _ _
      have aB3_20 : pair0_region.sl.v1807_4 d L tab k r g1 g2 hR hin h4 = AccMath.accVec (rowF fl tab (wL L).val (2 * t1.val) (2 * k.val + 1)) (offF fl (wL L).val (2 * t1.val) (2 * k.val + 1)) 3 20 := by
        unfold pair0_region.sl.v1807_4; rw [aB3_19]
        exact acc_step d L fl tab (wL L).val (2 * t1.val) (2 * k.val + 1) 1 _ hRB ⟨19, by decide⟩ ⟨3, by decide⟩ 48#32 rfl _ hwB_19 _ (k1_off39_form ⟨1, by decide⟩ _ _) _ _
      have aB3_21 : pair0_region.sl.v1843_4 d L tab k r g1 g2 hR hin h4 = AccMath.accVec (rowF fl tab (wL L).val (2 * t1.val) (2 * k.val + 1)) (offF fl (wL L).val (2 * t1.val) (2 * k.val + 1)) 3 21 := by
        unfold pair0_region.sl.v1843_4; rw [aB3_20]
        exact acc_step d L fl tab (wL L).val (2 * t1.val) (2 * k.val + 1) 1 _ hRB ⟨20, by decide⟩ ⟨3, by decide⟩ 48#32 rfl _ hwB_20 _ (k1_off40_form ⟨1, by decide⟩ _ _) _ _
      have aB3_22 : pair0_region.sl.v1879_4 d L tab k r g1 g2 hR hin h4 = AccMath.accVec (rowF fl tab (wL L).val (2 * t1.val) (2 * k.val + 1)) (offF fl (wL L).val (2 * t1.val) (2 * k.val + 1)) 3 22 := by
        unfold pair0_region.sl.v1879_4; rw [aB3_21]
        exact acc_step d L fl tab (wL L).val (2 * t1.val) (2 * k.val + 1) 1 _ hRB ⟨21, by decide⟩ ⟨3, by decide⟩ 48#32 rfl _ hwB_21 _ (k1_off41_form ⟨1, by decide⟩ _ _) _ _
      have aB3_23 : pair0_region.sl.v1915_4 d L tab k r g1 g2 hR hin h4 = AccMath.accVec (rowF fl tab (wL L).val (2 * t1.val) (2 * k.val + 1)) (offF fl (wL L).val (2 * t1.val) (2 * k.val + 1)) 3 23 := by
        unfold pair0_region.sl.v1915_4; rw [aB3_22]
        exact acc_step d L fl tab (wL L).val (2 * t1.val) (2 * k.val + 1) 1 _ hRB ⟨22, by decide⟩ ⟨3, by decide⟩ 48#32 rfl _ hwB_22 _ (k1_off42_form ⟨1, by decide⟩ _ _) _ _
      have aB3_24 : pair0_region.sl.v1951_4 d L tab k r g1 g2 hR hin h4 = AccMath.accVec (rowF fl tab (wL L).val (2 * t1.val) (2 * k.val + 1)) (offF fl (wL L).val (2 * t1.val) (2 * k.val + 1)) 3 24 := by
        unfold pair0_region.sl.v1951_4; rw [aB3_23]
        exact acc_step d L fl tab (wL L).val (2 * t1.val) (2 * k.val + 1) 1 _ hRB ⟨23, by decide⟩ ⟨3, by decide⟩ 48#32 rfl _ hwB_23 _ (k1_off43_form ⟨1, by decide⟩ _ _) _ _
      have aB3_25 : pair0_region.sl.v1987_4 d L tab k r g1 g2 hR hin h4 = AccMath.accVec (rowF fl tab (wL L).val (2 * t1.val) (2 * k.val + 1)) (offF fl (wL L).val (2 * t1.val) (2 * k.val + 1)) 3 25 := by
        unfold pair0_region.sl.v1987_4; rw [aB3_24]
        exact acc_step d L fl tab (wL L).val (2 * t1.val) (2 * k.val + 1) 1 _ hRB ⟨24, by decide⟩ ⟨3, by decide⟩ 48#32 rfl _ hwB_24 _ (k1_off44_form ⟨1, by decide⟩ _ _) _ _
      have aB3_26 : pair0_region.sl.v2023_4 d L tab k r g1 g2 hR hin h4 = AccMath.accVec (rowF fl tab (wL L).val (2 * t1.val) (2 * k.val + 1)) (offF fl (wL L).val (2 * t1.val) (2 * k.val + 1)) 3 26 := by
        unfold pair0_region.sl.v2023_4; rw [aB3_25]
        exact acc_step d L fl tab (wL L).val (2 * t1.val) (2 * k.val + 1) 1 _ hRB ⟨25, by decide⟩ ⟨3, by decide⟩ 48#32 rfl _ hwB_25 _ (k1_off45_form ⟨1, by decide⟩ _ _) _ _
      have aB3_27 : pair0_region.sl.v2059_4 d L tab k r g1 g2 hR hin h4 = AccMath.accVec (rowF fl tab (wL L).val (2 * t1.val) (2 * k.val + 1)) (offF fl (wL L).val (2 * t1.val) (2 * k.val + 1)) 3 27 := by
        unfold pair0_region.sl.v2059_4; rw [aB3_26]
        exact acc_step d L fl tab (wL L).val (2 * t1.val) (2 * k.val + 1) 1 _ hRB ⟨26, by decide⟩ ⟨3, by decide⟩ 48#32 rfl _ hwB_26 _ (k1_off46_form ⟨1, by decide⟩ _ _) _ _
      have aB3_28 : pair0_region.sl.v2095_4 d L tab k r g1 g2 hR hin h4 = AccMath.accVec (rowF fl tab (wL L).val (2 * t1.val) (2 * k.val + 1)) (offF fl (wL L).val (2 * t1.val) (2 * k.val + 1)) 3 28 := by
        unfold pair0_region.sl.v2095_4; rw [aB3_27]
        exact acc_step d L fl tab (wL L).val (2 * t1.val) (2 * k.val + 1) 1 _ hRB ⟨27, by decide⟩ ⟨3, by decide⟩ 48#32 rfl _ hwB_27 _ (k1_off47_form ⟨1, by decide⟩ _ _) _ _
      have aB3_29 : pair0_region.sl.v2131_4 d L tab k r g1 g2 hR hin h4 = AccMath.accVec (rowF fl tab (wL L).val (2 * t1.val) (2 * k.val + 1)) (offF fl (wL L).val (2 * t1.val) (2 * k.val + 1)) 3 29 := by
        unfold pair0_region.sl.v2131_4; rw [aB3_28]
        exact acc_step d L fl tab (wL L).val (2 * t1.val) (2 * k.val + 1) 1 _ hRB ⟨28, by decide⟩ ⟨3, by decide⟩ 48#32 rfl _ hwB_28 _ (k1_off48_form ⟨1, by decide⟩ _ _) _ _
      have aB3_30 : pair0_region.sl.v2167_4 d L tab k r g1 g2 hR hin h4 = AccMath.accVec (rowF fl tab (wL L).val (2 * t1.val) (2 * k.val + 1)) (offF fl (wL L).val (2 * t1.val) (2 * k.val + 1)) 3 30 := by
        unfold pair0_region.sl.v2167_4; rw [aB3_29]
        exact acc_step d L fl tab (wL L).val (2 * t1.val) (2 * k.val + 1) 1 _ hRB ⟨29, by decide⟩ ⟨3, by decide⟩ 48#32 rfl _ hwB_29 _ (k1_off49_form ⟨1, by decide⟩ _ _) _ _
      have aB3_31 : pair0_region.sl.v2203_4 d L tab k r g1 g2 hR hin h4 = AccMath.accVec (rowF fl tab (wL L).val (2 * t1.val) (2 * k.val + 1)) (offF fl (wL L).val (2 * t1.val) (2 * k.val + 1)) 3 31 := by
        unfold pair0_region.sl.v2203_4; rw [aB3_30]
        exact acc_step d L fl tab (wL L).val (2 * t1.val) (2 * k.val + 1) 1 _ hRB ⟨30, by decide⟩ ⟨3, by decide⟩ 48#32 rfl _ hwB_30 _ (k1_off50_form ⟨1, by decide⟩ _ _) _ _
      have aB3_32 : pair0_region.sl.v2239_4 d L tab k r g1 g2 hR hin h4 = AccMath.accVec (rowF fl tab (wL L).val (2 * t1.val) (2 * k.val + 1)) (offF fl (wL L).val (2 * t1.val) (2 * k.val + 1)) 3 32 := by
        unfold pair0_region.sl.v2239_4; rw [aB3_31]
        exact acc_step d L fl tab (wL L).val (2 * t1.val) (2 * k.val + 1) 1 _ hRB ⟨31, by decide⟩ ⟨3, by decide⟩ 48#32 rfl _ hwB_31 _ (k1_off51_form ⟨1, by decide⟩ _ _) _ _
      have aB3_33 : pair0_region.sl.v1699_5 d L tab k r g1 g2 hR hin h4 = AccMath.accVec (rowF fl tab (wL L).val (2 * t1.val) (2 * k.val + 1)) (offF fl (wL L).val (2 * t1.val) (2 * k.val + 1)) 3 33 := by
        unfold pair0_region.sl.v1699_5; rw [aB3_32]
        exact acc_step d L fl tab (wL L).val (2 * t1.val) (2 * k.val + 1) 1 _ hRB ⟨32, by decide⟩ ⟨3, by decide⟩ 48#32 rfl _ hwB_32 _ (k1_off36_form ⟨2, by decide⟩ _ _) _ _
      have aB3_34 : pair0_region.sl.v1735_5 d L tab k r g1 g2 hR hin h4 = AccMath.accVec (rowF fl tab (wL L).val (2 * t1.val) (2 * k.val + 1)) (offF fl (wL L).val (2 * t1.val) (2 * k.val + 1)) 3 34 := by
        unfold pair0_region.sl.v1735_5; rw [aB3_33]
        exact acc_step d L fl tab (wL L).val (2 * t1.val) (2 * k.val + 1) 1 _ hRB ⟨33, by decide⟩ ⟨3, by decide⟩ 48#32 rfl _ hwB_33 _ (k1_off37_form ⟨2, by decide⟩ _ _) _ _
      have aB3_35 : pair0_region.sl.v1771_5 d L tab k r g1 g2 hR hin h4 = AccMath.accVec (rowF fl tab (wL L).val (2 * t1.val) (2 * k.val + 1)) (offF fl (wL L).val (2 * t1.val) (2 * k.val + 1)) 3 35 := by
        unfold pair0_region.sl.v1771_5; rw [aB3_34]
        exact acc_step d L fl tab (wL L).val (2 * t1.val) (2 * k.val + 1) 1 _ hRB ⟨34, by decide⟩ ⟨3, by decide⟩ 48#32 rfl _ hwB_34 _ (k1_off38_form ⟨2, by decide⟩ _ _) _ _
      have aB3_36 : pair0_region.sl.v1807_5 d L tab k r g1 g2 hR hin h4 = AccMath.accVec (rowF fl tab (wL L).val (2 * t1.val) (2 * k.val + 1)) (offF fl (wL L).val (2 * t1.val) (2 * k.val + 1)) 3 36 := by
        unfold pair0_region.sl.v1807_5; rw [aB3_35]
        exact acc_step d L fl tab (wL L).val (2 * t1.val) (2 * k.val + 1) 1 _ hRB ⟨35, by decide⟩ ⟨3, by decide⟩ 48#32 rfl _ hwB_35 _ (k1_off39_form ⟨2, by decide⟩ _ _) _ _
      have aB3_37 : pair0_region.sl.v1843_5 d L tab k r g1 g2 hR hin h4 = AccMath.accVec (rowF fl tab (wL L).val (2 * t1.val) (2 * k.val + 1)) (offF fl (wL L).val (2 * t1.val) (2 * k.val + 1)) 3 37 := by
        unfold pair0_region.sl.v1843_5; rw [aB3_36]
        exact acc_step d L fl tab (wL L).val (2 * t1.val) (2 * k.val + 1) 1 _ hRB ⟨36, by decide⟩ ⟨3, by decide⟩ 48#32 rfl _ hwB_36 _ (k1_off40_form ⟨2, by decide⟩ _ _) _ _
      have aB3_38 : pair0_region.sl.v1879_5 d L tab k r g1 g2 hR hin h4 = AccMath.accVec (rowF fl tab (wL L).val (2 * t1.val) (2 * k.val + 1)) (offF fl (wL L).val (2 * t1.val) (2 * k.val + 1)) 3 38 := by
        unfold pair0_region.sl.v1879_5; rw [aB3_37]
        exact acc_step d L fl tab (wL L).val (2 * t1.val) (2 * k.val + 1) 1 _ hRB ⟨37, by decide⟩ ⟨3, by decide⟩ 48#32 rfl _ hwB_37 _ (k1_off41_form ⟨2, by decide⟩ _ _) _ _
      have aB3_39 : pair0_region.sl.v1915_5 d L tab k r g1 g2 hR hin h4 = AccMath.accVec (rowF fl tab (wL L).val (2 * t1.val) (2 * k.val + 1)) (offF fl (wL L).val (2 * t1.val) (2 * k.val + 1)) 3 39 := by
        unfold pair0_region.sl.v1915_5; rw [aB3_38]
        exact acc_step d L fl tab (wL L).val (2 * t1.val) (2 * k.val + 1) 1 _ hRB ⟨38, by decide⟩ ⟨3, by decide⟩ 48#32 rfl _ hwB_38 _ (k1_off42_form ⟨2, by decide⟩ _ _) _ _
      have aB3_40 : pair0_region.sl.v1951_5 d L tab k r g1 g2 hR hin h4 = AccMath.accVec (rowF fl tab (wL L).val (2 * t1.val) (2 * k.val + 1)) (offF fl (wL L).val (2 * t1.val) (2 * k.val + 1)) 3 40 := by
        unfold pair0_region.sl.v1951_5; rw [aB3_39]
        exact acc_step d L fl tab (wL L).val (2 * t1.val) (2 * k.val + 1) 1 _ hRB ⟨39, by decide⟩ ⟨3, by decide⟩ 48#32 rfl _ hwB_39 _ (k1_off43_form ⟨2, by decide⟩ _ _) _ _
      have aB3_41 : pair0_region.sl.v1987_5 d L tab k r g1 g2 hR hin h4 = AccMath.accVec (rowF fl tab (wL L).val (2 * t1.val) (2 * k.val + 1)) (offF fl (wL L).val (2 * t1.val) (2 * k.val + 1)) 3 41 := by
        unfold pair0_region.sl.v1987_5; rw [aB3_40]
        exact acc_step d L fl tab (wL L).val (2 * t1.val) (2 * k.val + 1) 1 _ hRB ⟨40, by decide⟩ ⟨3, by decide⟩ 48#32 rfl _ hwB_40 _ (k1_off44_form ⟨2, by decide⟩ _ _) _ _
      have aB3_42 : pair0_region.sl.v2023_5 d L tab k r g1 g2 hR hin h4 = AccMath.accVec (rowF fl tab (wL L).val (2 * t1.val) (2 * k.val + 1)) (offF fl (wL L).val (2 * t1.val) (2 * k.val + 1)) 3 42 := by
        unfold pair0_region.sl.v2023_5; rw [aB3_41]
        exact acc_step d L fl tab (wL L).val (2 * t1.val) (2 * k.val + 1) 1 _ hRB ⟨41, by decide⟩ ⟨3, by decide⟩ 48#32 rfl _ hwB_41 _ (k1_off45_form ⟨2, by decide⟩ _ _) _ _
      have aB3_43 : pair0_region.sl.v2059_5 d L tab k r g1 g2 hR hin h4 = AccMath.accVec (rowF fl tab (wL L).val (2 * t1.val) (2 * k.val + 1)) (offF fl (wL L).val (2 * t1.val) (2 * k.val + 1)) 3 43 := by
        unfold pair0_region.sl.v2059_5; rw [aB3_42]
        exact acc_step d L fl tab (wL L).val (2 * t1.val) (2 * k.val + 1) 1 _ hRB ⟨42, by decide⟩ ⟨3, by decide⟩ 48#32 rfl _ hwB_42 _ (k1_off46_form ⟨2, by decide⟩ _ _) _ _
      have aB3_44 : pair0_region.sl.v2095_5 d L tab k r g1 g2 hR hin h4 = AccMath.accVec (rowF fl tab (wL L).val (2 * t1.val) (2 * k.val + 1)) (offF fl (wL L).val (2 * t1.val) (2 * k.val + 1)) 3 44 := by
        unfold pair0_region.sl.v2095_5; rw [aB3_43]
        exact acc_step d L fl tab (wL L).val (2 * t1.val) (2 * k.val + 1) 1 _ hRB ⟨43, by decide⟩ ⟨3, by decide⟩ 48#32 rfl _ hwB_43 _ (k1_off47_form ⟨2, by decide⟩ _ _) _ _
      have aB3_45 : pair0_region.sl.v2131_5 d L tab k r g1 g2 hR hin h4 = AccMath.accVec (rowF fl tab (wL L).val (2 * t1.val) (2 * k.val + 1)) (offF fl (wL L).val (2 * t1.val) (2 * k.val + 1)) 3 45 := by
        unfold pair0_region.sl.v2131_5; rw [aB3_44]
        exact acc_step d L fl tab (wL L).val (2 * t1.val) (2 * k.val + 1) 1 _ hRB ⟨44, by decide⟩ ⟨3, by decide⟩ 48#32 rfl _ hwB_44 _ (k1_off48_form ⟨2, by decide⟩ _ _) _ _
      have aB3_46 : pair0_region.sl.v2167_5 d L tab k r g1 g2 hR hin h4 = AccMath.accVec (rowF fl tab (wL L).val (2 * t1.val) (2 * k.val + 1)) (offF fl (wL L).val (2 * t1.val) (2 * k.val + 1)) 3 46 := by
        unfold pair0_region.sl.v2167_5; rw [aB3_45]
        exact acc_step d L fl tab (wL L).val (2 * t1.val) (2 * k.val + 1) 1 _ hRB ⟨45, by decide⟩ ⟨3, by decide⟩ 48#32 rfl _ hwB_45 _ (k1_off49_form ⟨2, by decide⟩ _ _) _ _
      have aB3_47 : pair0_region.sl.v2203_5 d L tab k r g1 g2 hR hin h4 = AccMath.accVec (rowF fl tab (wL L).val (2 * t1.val) (2 * k.val + 1)) (offF fl (wL L).val (2 * t1.val) (2 * k.val + 1)) 3 47 := by
        unfold pair0_region.sl.v2203_5; rw [aB3_46]
        exact acc_step d L fl tab (wL L).val (2 * t1.val) (2 * k.val + 1) 1 _ hRB ⟨46, by decide⟩ ⟨3, by decide⟩ 48#32 rfl _ hwB_46 _ (k1_off50_form ⟨2, by decide⟩ _ _) _ _
      have aB3_48 : pair0_region.sl.v2239_5 d L tab k r g1 g2 hR hin h4 = AccMath.accVec (rowF fl tab (wL L).val (2 * t1.val) (2 * k.val + 1)) (offF fl (wL L).val (2 * t1.val) (2 * k.val + 1)) 3 48 := by
        unfold pair0_region.sl.v2239_5; rw [aB3_47]
        exact acc_step d L fl tab (wL L).val (2 * t1.val) (2 * k.val + 1) 1 _ hRB ⟨47, by decide⟩ ⟨3, by decide⟩ 48#32 rfl _ hwB_47 _ (k1_off51_form ⟨2, by decide⟩ _ _) _ _
      have aB3_49 : pair0_region.sl.v1604 d L tab k r g1 g2 hR hin h4 = AccMath.accVec (rowF fl tab (wL L).val (2 * t1.val) (2 * k.val + 1)) (offF fl (wL L).val (2 * t1.val) (2 * k.val + 1)) 3 49 := by
        unfold pair0_region.sl.v1604; rw [aB3_48]
        exact acc_step d L fl tab (wL L).val (2 * t1.val) (2 * k.val + 1) 1 _ hRB ⟨48, by decide⟩ ⟨3, by decide⟩ 48#32 rfl _ hwB_48 _ (k1_off53_form _ _) _ _
      have aB3_50 : pair0_region.sl.v1638 d L tab k r g1 g2 hR hin h4 = AccMath.accVec (rowF fl tab (wL L).val (2 * t1.val) (2 * k.val + 1)) (offF fl (wL L).val (2 * t1.val) (2 * k.val + 1)) 3 50 := by
        unfold pair0_region.sl.v1638; rw [aB3_49]
        exact acc_step d L fl tab (wL L).val (2 * t1.val) (2 * k.val + 1) 1 _ hRB ⟨49, by decide⟩ ⟨3, by decide⟩ 48#32 rfl _ hwB_49 _ (k1_off54_form _ _) _ _
      have hPB3 : ∀ x : S1x1x16.Idx, pair0_region.sl.v1658 d L tab k r g1 g2 hR hin h4 x = Spec.bagPartial fl tab (128 * (wL L).val + 16 * (2 * t1.val) + (2 * k.val + 1)) (16 * 3 + (x 2).val) 50 := fun x => by
        unfold pair0_region.sl.v1658; rw [aB3_50]; exact payload_ok fl tab (wL L).val (2 * t1.val) (2 * k.val + 1) ⟨3, by decide⟩ _ x
      refine ⟨hT0, hV0, hT1, hV1, ?_, ?_⟩
      · exact RowsV_landing0 d L fl tab _ (wL L).val (2 * t1.val) (2 * (k.val + 1)) g1 (k1_off33 k) _ (words_of_TixV d L fl (wL L).val (2 * t1.val) 0 (2 * (k.val + 1)) (by decide) (by omega) g1 hT0 (k1_off33 k) (by rw [k1_off33_eq]; show 128 * k.val + 128 = 1024 * 0 + 64 * (2 * (k.val + 1)); omega)) _ _
      · have K0 := (WbV_iff_WbK d L fl tab (wL L).val (2 * t1.val) 0 (2 * k.val) wb).mp hWb
        have KA := WbK_bag d L fl tab (wL L).val (2 * t1.val) 0 _ wb K0 ⟨2 * k.val, by omega⟩ (k1_off28 k) (k1_off29 k) (k1_off30 k) (k1_off31 k)
          (k1_off28_eq k) (k1_off29_eq k) (k1_off30_eq k) (k1_off31_eq k) (k1_off28_inb k) (k1_off29_inb k) (k1_off30_inb k) (k1_off31_inb k) _ _ _ _ hPA0 hPA1 hPA2 hPA3
        have KB := WbK_bag d L fl tab (wL L).val (2 * t1.val) 0 _ _ KA ⟨2 * k.val + 1, by omega⟩ (k1_off55 k) (k1_off56 k) (k1_off57 k) (k1_off58 k)
          (k1_off55_eq k) (k1_off56_eq k) (k1_off57_eq k) (k1_off58_eq k) (k1_off55_inb k) (k1_off56_inb k) (k1_off57_inb k) (k1_off58_inb k) _ _ _ _ hPB0 hPB1 hPB2 hPB3
        intro g c hg
        refine KB g c ?_
        by_cases h1 : g.val < 2 * k.val
        · exact .inl (.inl h1)
        by_cases h2 : g.val = 2 * k.val
        · exact .inl (.inr (Fin.ext h2))
        · exact .inr (Fin.ext (by show g.val = 2 * k.val + 1; omega))

  · have h4 := cond4_ge k hk
    have h5 := cond5_ge t1 k hk
    have h8 : k.val < 8 := lt_of_lt_of_eq k.isLt (by decide)
    have hk7 : k.val = 7 := by omega
    sl_exec_parts (disch := first | decide | (chk_disch; exact hR _))
    sl_unroll
    sl_exec_parts (disch := first | decide | (chk_disch; exact hR _))
    sl_unroll
    sl_exec_parts (disch := first | decide | (chk_disch; exact hR _))
    sl_step
    have hmin : min (128 * (k.val + 1)) 1024 = 1024 := by omega
    have hoff : k1_off34 = lo (k.val + 1) := by rw [k1_off34_eq]; unfold lo; rw [hmin]
    isplitl []; · iexact Hmw'
    iexists _; iexists g1; iexists g2; iexists _; iexists k1_off34; iexists (k1_off34_inb t1 k h5)
    isplitr; rotate_left
    · isplitl [Hg0]; · iexact Hg0
      isplitl [H1]; · iexact H1
      isplitl [Ht]; · iexact Ht
      isplitl [H3]; · iexact H3
      isplitl [H2]; · iexact H2
      isplitl [H4]; · iexact H4
      isplitl [Hg1]; · iexact Hg1
      iexists (insert (SemLoc.dma cc1_scratch6.sem, (default : HIx 1)) (insert (SemLoc.dma cc1_scratch5.sem, (default : HIx 1)) W')); isplitr
      · ipureintro; intro p hp
        rcases Finset.mem_insert.mp hp with rfl | hp
        · exact .inr rfl
        rcases Finset.mem_insert.mp hp with rfl | hp
        · exact .inr rfl
        · exact hW' p hp
      · iexact HO
    · ipureintro
      refine ⟨hT, hR, hoff, ?_⟩
      obtain ⟨hT0, hV0, hT1, hV1, hRows, hWb⟩ := hV
      have hk8 : k.val < 8 := lt_of_lt_of_eq k.isLt (by decide)
      have hRA : RowsV d L fl tab (wL L).val (2 * t1.val) (2 * k.val) 0 (View.write (Elt F) (h1M).view r (pair0_region.sl.gather0_1 d L tab k g1 hin) Finset.univ) :=
        RowsV_keep0 d L fl tab (wL L).val (2 * t1.val) (2 * k.val) r _ hRows
      have hRB0 : RowsV d L fl tab (wL L).val (2 * t1.val) (2 * k.val + 1) 1 (View.write (Elt F) (h1M).view r (pair0_region.sl.gather0_1 d L tab k g1 hin) Finset.univ) :=
        RowsV_landing1 d L fl tab _ (wL L).val (2 * t1.val) (2 * k.val + 1) g1 (k1_off7 k) _
          (words_of_TixV d L fl (wL L).val (2 * t1.val) 0 (2 * k.val + 1) (by decide) (by omega) g1 hT0 (k1_off7 k) (by rw [k1_off7_eq]; show 128 * k.val + 64 = 1024 * 0 + 64 * (2 * k.val + 1); omega)) _ r
      have hRB : RowsV d L fl tab (wL L).val (2 * t1.val) (2 * k.val + 1) 1 (View.write (Elt F) (h0M).view (View.write (Elt F) (h1M).view r (pair0_region.sl.gather0_1 d L tab k g1 hin) Finset.univ) (pair0_region.sl.gather212_1 d L tab t1 k g1 hin h5) Finset.univ) :=
        RowsV_keep1 d L fl tab (wL L).val (2 * t1.val) (2 * k.val + 1) _ _ hRB0
      have hwA_0 : pair0_region.sl.v1667_6 d L k g2 = Spec.tcol (blkWord fl (wL L).val (2 * t1.val) (64 * (2 * k.val) + 0)) :=
        (rv_extract d L g2 _ _ _ 0 (by decide) _ _).trans (rv_word d L fl (wL L).val (2 * t1.val) 0 (2 * k.val) 0 (by decide) (by omega) (by decide) g2 hV0 _
          (by rw [k1_off8_eq k ⟨0, by decide⟩]; show 128 * k.val + 16 * 0 + 0 = 1024 * 0 + 64 * (2 * k.val) + 0; omega) _)
      have hwA_1 : pair0_region.sl.v1703_6 d L k g2 = Spec.tcol (blkWord fl (wL L).val (2 * t1.val) (64 * (2 * k.val) + 1)) :=
        (rv_extract d L g2 _ _ _ 1 (by decide) _ _).trans (rv_word d L fl (wL L).val (2 * t1.val) 0 (2 * k.val) 1 (by decide) (by omega) (by decide) g2 hV0 _
          (by rw [k1_off8_eq k ⟨0, by decide⟩]; show 128 * k.val + 16 * 0 + 1 = 1024 * 0 + 64 * (2 * k.val) + 1; omega) _)
      have hwA_2 : pair0_region.sl.v1739_6 d L k g2 = Spec.tcol (blkWord fl (wL L).val (2 * t1.val) (64 * (2 * k.val) + 2)) :=
        (rv_extract d L g2 _ _ _ 2 (by decide) _ _).trans (rv_word d L fl (wL L).val (2 * t1.val) 0 (2 * k.val) 2 (by decide) (by omega) (by decide) g2 hV0 _
          (by rw [k1_off8_eq k ⟨0, by decide⟩]; show 128 * k.val + 16 * 0 + 2 = 1024 * 0 + 64 * (2 * k.val) + 2; omega) _)
      have hwA_3 : pair0_region.sl.v1775_6 d L k g2 = Spec.tcol (blkWord fl (wL L).val (2 * t1.val) (64 * (2 * k.val) + 3)) :=
        (rv_extract d L g2 _ _ _ 3 (by decide) _ _).trans (rv_word d L fl (wL L).val (2 * t1.val) 0 (2 * k.val) 3 (by decide) (by omega) (by decide) g2 hV0 _
          (by rw [k1_off8_eq k ⟨0, by decide⟩]; show 128 * k.val + 16 * 0 + 3 = 1024 * 0 + 64 * (2 * k.val) + 3; omega) _)
      have hwA_4 : pair0_region.sl.v1811_6 d L k g2 = Spec.tcol (blkWord fl (wL L).val (2 * t1.val) (64 * (2 * k.val) + 4)) :=
        (rv_extract d L g2 _ _ _ 4 (by decide) _ _).trans (rv_word d L fl (wL L).val (2 * t1.val) 0 (2 * k.val) 4 (by decide) (by omega) (by decide) g2 hV0 _
          (by rw [k1_off8_eq k ⟨0, by decide⟩]; show 128 * k.val + 16 * 0 + 4 = 1024 * 0 + 64 * (2 * k.val) + 4; omega) _)
      have hwA_5 : pair0_region.sl.v1847_6 d L k g2 = Spec.tcol (blkWord fl (wL L).val (2 * t1.val) (64 * (2 * k.val) + 5)) :=
        (rv_extract d L g2 _ _ _ 5 (by decide) _ _).trans (rv_word d L fl (wL L).val (2 * t1.val) 0 (2 * k.val) 5 (by decide) (by omega) (by decide) g2 hV0 _
          (by rw [k1_off8_eq k ⟨0, by decide⟩]; show 128 * k.val + 16 * 0 + 5 = 1024 * 0 + 64 * (2 * k.val) + 5; omega) _)
      have hwA_6 : pair0_region.sl.v1883_6 d L k g2 = Spec.tcol (blkWord fl (wL L).val (2 * t1.val) (64 * (2 * k.val) + 6)) :=
        (rv_extract d L g2 _ _ _ 6 (by decide) _ _).trans (rv_word d L fl (wL L).val (2 * t1.val) 0 (2 * k.val) 6 (by decide) (by omega) (by decide) g2 hV0 _
          (by rw [k1_off8_eq k ⟨0, by decide⟩]; show 128 * k.val + 16 * 0 + 6 = 1024 * 0 + 64 * (2 * k.val) + 6; omega) _)
      have hwA_7 : pair0_region.sl.v1919_6 d L k g2 = Spec.tcol (blkWord fl (wL L).val (2 * t1.val) (64 * (2 * k.val) + 7)) :=
        (rv_extract d L g2 _ _ _ 7 (by decide) _ _).trans (rv_word d L fl (wL L).val (2 * t1.val) 0 (2 * k.val) 7 (by decide) (by omega) (by decide) g2 hV0 _
          (by rw [k1_off8_eq k ⟨0, by decide⟩]; show 128 * k.val + 16 * 0 + 7 = 1024 * 0 + 64 * (2 * k.val) + 7; omega) _)
      have hwA_8 : pair0_region.sl.v1955_6 d L k g2 = Spec.tcol (blkWord fl (wL L).val (2 * t1.val) (64 * (2 * k.val) + 8)) :=
        (rv_extract d L g2 _ _ _ 8 (by decide) _ _).trans (rv_word d L fl (wL L).val (2 * t1.val) 0 (2 * k.val) 8 (by decide) (by omega) (by decide) g2 hV0 _
          (by rw [k1_off8_eq k ⟨0, by decide⟩]; show 128 * k.val + 16 * 0 + 8 = 1024 * 0 + 64 * (2 * k.val) + 8; omega) _)
      have hwA_9 : pair0_region.sl.v1991_6 d L k g2 = Spec.tcol (blkWord fl (wL L).val (2 * t1.val) (64 * (2 * k.val) + 9)) :=
        (rv_extract d L g2 _ _ _ 9 (by decide) _ _).trans (rv_word d L fl (wL L).val (2 * t1.val) 0 (2 * k.val) 9 (by decide) (by omega) (by decide) g2 hV0 _
          (by rw [k1_off8_eq k ⟨0, by decide⟩]; show 128 * k.val + 16 * 0 + 9 = 1024 * 0 + 64 * (2 * k.val) + 9; omega) _)
      have hwA_10 : pair0_region.sl.v2027_6 d L k g2 = Spec.tcol (blkWord fl (wL L).val (2 * t1.val) (64 * (2 * k.val) + 10)) :=
        (rv_extract d L g2 _ _ _ 10 (by decide) _ _).trans (rv_word d L fl (wL L).val (2 * t1.val) 0 (2 * k.val) 10 (by decide) (by omega) (by decide) g2 hV0 _
          (by rw [k1_off8_eq k ⟨0, by decide⟩]; show 128 * k.val + 16 * 0 + 10 = 1024 * 0 + 64 * (2 * k.val) + 10; omega) _)
      have hwA_11 : pair0_region.sl.v2063_6 d L k g2 = Spec.tcol (blkWord fl (wL L).val (2 * t1.val) (64 * (2 * k.val) + 11)) :=
        (rv_extract d L g2 _ _ _ 11 (by decide) _ _).trans (rv_word d L fl (wL L).val (2 * t1.val) 0 (2 * k.val) 11 (by decide) (by omega) (by decide) g2 hV0 _
          (by rw [k1_off8_eq k ⟨0, by decide⟩]; show 128 * k.val + 16 * 0 + 11 = 1024 * 0 + 64 * (2 * k.val) + 11; omega) _)
      have hwA_12 : pair0_region.sl.v2099_6 d L k g2 = Spec.tcol (blkWord fl (wL L).val (2 * t1.val) (64 * (2 * k.val) + 12)) :=
        (rv_extract d L g2 _ _ _ 12 (by decide) _ _).trans (rv_word d L fl (wL L).val (2 * t1.val) 0 (2 * k.val) 12 (by decide) (by omega) (by decide) g2 hV0 _
          (by rw [k1_off8_eq k ⟨0, by decide⟩]; show 128 * k.val + 16 * 0 + 12 = 1024 * 0 + 64 * (2 * k.val) + 12; omega) _)
      have hwA_13 : pair0_region.sl.v2135_6 d L k g2 = Spec.tcol (blkWord fl (wL L).val (2 * t1.val) (64 * (2 * k.val) + 13)) :=
        (rv_extract d L g2 _ _ _ 13 (by decide) _ _).trans (rv_word d L fl (wL L).val (2 * t1.val) 0 (2 * k.val) 13 (by decide) (by omega) (by decide) g2 hV0 _
          (by rw [k1_off8_eq k ⟨0, by decide⟩]; show 128 * k.val + 16 * 0 + 13 = 1024 * 0 + 64 * (2 * k.val) + 13; omega) _)
      have hwA_14 : pair0_region.sl.v2171_6 d L k g2 = Spec.tcol (blkWord fl (wL L).val (2 * t1.val) (64 * (2 * k.val) + 14)) :=
        (rv_extract d L g2 _ _ _ 14 (by decide) _ _).trans (rv_word d L fl (wL L).val (2 * t1.val) 0 (2 * k.val) 14 (by decide) (by omega) (by decide) g2 hV0 _
          (by rw [k1_off8_eq k ⟨0, by decide⟩]; show 128 * k.val + 16 * 0 + 14 = 1024 * 0 + 64 * (2 * k.val) + 14; omega) _)
      have hwA_15 : pair0_region.sl.v2207_6 d L k g2 = Spec.tcol (blkWord fl (wL L).val (2 * t1.val) (64 * (2 * k.val) + 15)) :=
        (rv_extract d L g2 _ _ _ 15 (by decide) _ _).trans (rv_word d L fl (wL L).val (2 * t1.val) 0 (2 * k.val) 15 (by decide) (by omega) (by decide) g2 hV0 _
          (by rw [k1_off8_eq k ⟨0, by decide⟩]; show 128 * k.val + 16 * 0 + 15 = 1024 * 0 + 64 * (2 * k.val) + 15; omega) _)
      have hwA_16 : pair0_region.sl.v1667_7 d L k g2 = Spec.tcol (blkWord fl (wL L).val (2 * t1.val) (64 * (2 * k.val) + 16)) :=
        (rv_extract d L g2 _ _ _ 0 (by decide) _ _).trans (rv_word d L fl (wL L).val (2 * t1.val) 0 (2 * k.val) 16 (by decide) (by omega) (by decide) g2 hV0 _
          (by rw [k1_off8_eq k ⟨1, by decide⟩]; show 128 * k.val + 16 * 1 + 0 = 1024 * 0 + 64 * (2 * k.val) + 16; omega) _)
      have hwA_17 : pair0_region.sl.v1703_7 d L k g2 = Spec.tcol (blkWord fl (wL L).val (2 * t1.val) (64 * (2 * k.val) + 17)) :=
        (rv_extract d L g2 _ _ _ 1 (by decide) _ _).trans (rv_word d L fl (wL L).val (2 * t1.val) 0 (2 * k.val) 17 (by decide) (by omega) (by decide) g2 hV0 _
          (by rw [k1_off8_eq k ⟨1, by decide⟩]; show 128 * k.val + 16 * 1 + 1 = 1024 * 0 + 64 * (2 * k.val) + 17; omega) _)
      have hwA_18 : pair0_region.sl.v1739_7 d L k g2 = Spec.tcol (blkWord fl (wL L).val (2 * t1.val) (64 * (2 * k.val) + 18)) :=
        (rv_extract d L g2 _ _ _ 2 (by decide) _ _).trans (rv_word d L fl (wL L).val (2 * t1.val) 0 (2 * k.val) 18 (by decide) (by omega) (by decide) g2 hV0 _
          (by rw [k1_off8_eq k ⟨1, by decide⟩]; show 128 * k.val + 16 * 1 + 2 = 1024 * 0 + 64 * (2 * k.val) + 18; omega) _)
      have hwA_19 : pair0_region.sl.v1775_7 d L k g2 = Spec.tcol (blkWord fl (wL L).val (2 * t1.val) (64 * (2 * k.val) + 19)) :=
        (rv_extract d L g2 _ _ _ 3 (by decide) _ _).trans (rv_word d L fl (wL L).val (2 * t1.val) 0 (2 * k.val) 19 (by decide) (by omega) (by decide) g2 hV0 _
          (by rw [k1_off8_eq k ⟨1, by decide⟩]; show 128 * k.val + 16 * 1 + 3 = 1024 * 0 + 64 * (2 * k.val) + 19; omega) _)
      have hwA_20 : pair0_region.sl.v1811_7 d L k g2 = Spec.tcol (blkWord fl (wL L).val (2 * t1.val) (64 * (2 * k.val) + 20)) :=
        (rv_extract d L g2 _ _ _ 4 (by decide) _ _).trans (rv_word d L fl (wL L).val (2 * t1.val) 0 (2 * k.val) 20 (by decide) (by omega) (by decide) g2 hV0 _
          (by rw [k1_off8_eq k ⟨1, by decide⟩]; show 128 * k.val + 16 * 1 + 4 = 1024 * 0 + 64 * (2 * k.val) + 20; omega) _)
      have hwA_21 : pair0_region.sl.v1847_7 d L k g2 = Spec.tcol (blkWord fl (wL L).val (2 * t1.val) (64 * (2 * k.val) + 21)) :=
        (rv_extract d L g2 _ _ _ 5 (by decide) _ _).trans (rv_word d L fl (wL L).val (2 * t1.val) 0 (2 * k.val) 21 (by decide) (by omega) (by decide) g2 hV0 _
          (by rw [k1_off8_eq k ⟨1, by decide⟩]; show 128 * k.val + 16 * 1 + 5 = 1024 * 0 + 64 * (2 * k.val) + 21; omega) _)
      have hwA_22 : pair0_region.sl.v1883_7 d L k g2 = Spec.tcol (blkWord fl (wL L).val (2 * t1.val) (64 * (2 * k.val) + 22)) :=
        (rv_extract d L g2 _ _ _ 6 (by decide) _ _).trans (rv_word d L fl (wL L).val (2 * t1.val) 0 (2 * k.val) 22 (by decide) (by omega) (by decide) g2 hV0 _
          (by rw [k1_off8_eq k ⟨1, by decide⟩]; show 128 * k.val + 16 * 1 + 6 = 1024 * 0 + 64 * (2 * k.val) + 22; omega) _)
      have hwA_23 : pair0_region.sl.v1919_7 d L k g2 = Spec.tcol (blkWord fl (wL L).val (2 * t1.val) (64 * (2 * k.val) + 23)) :=
        (rv_extract d L g2 _ _ _ 7 (by decide) _ _).trans (rv_word d L fl (wL L).val (2 * t1.val) 0 (2 * k.val) 23 (by decide) (by omega) (by decide) g2 hV0 _
          (by rw [k1_off8_eq k ⟨1, by decide⟩]; show 128 * k.val + 16 * 1 + 7 = 1024 * 0 + 64 * (2 * k.val) + 23; omega) _)
      have hwA_24 : pair0_region.sl.v1955_7 d L k g2 = Spec.tcol (blkWord fl (wL L).val (2 * t1.val) (64 * (2 * k.val) + 24)) :=
        (rv_extract d L g2 _ _ _ 8 (by decide) _ _).trans (rv_word d L fl (wL L).val (2 * t1.val) 0 (2 * k.val) 24 (by decide) (by omega) (by decide) g2 hV0 _
          (by rw [k1_off8_eq k ⟨1, by decide⟩]; show 128 * k.val + 16 * 1 + 8 = 1024 * 0 + 64 * (2 * k.val) + 24; omega) _)
      have hwA_25 : pair0_region.sl.v1991_7 d L k g2 = Spec.tcol (blkWord fl (wL L).val (2 * t1.val) (64 * (2 * k.val) + 25)) :=
        (rv_extract d L g2 _ _ _ 9 (by decide) _ _).trans (rv_word d L fl (wL L).val (2 * t1.val) 0 (2 * k.val) 25 (by decide) (by omega) (by decide) g2 hV0 _
          (by rw [k1_off8_eq k ⟨1, by decide⟩]; show 128 * k.val + 16 * 1 + 9 = 1024 * 0 + 64 * (2 * k.val) + 25; omega) _)
      have hwA_26 : pair0_region.sl.v2027_7 d L k g2 = Spec.tcol (blkWord fl (wL L).val (2 * t1.val) (64 * (2 * k.val) + 26)) :=
        (rv_extract d L g2 _ _ _ 10 (by decide) _ _).trans (rv_word d L fl (wL L).val (2 * t1.val) 0 (2 * k.val) 26 (by decide) (by omega) (by decide) g2 hV0 _
          (by rw [k1_off8_eq k ⟨1, by decide⟩]; show 128 * k.val + 16 * 1 + 10 = 1024 * 0 + 64 * (2 * k.val) + 26; omega) _)
      have hwA_27 : pair0_region.sl.v2063_7 d L k g2 = Spec.tcol (blkWord fl (wL L).val (2 * t1.val) (64 * (2 * k.val) + 27)) :=
        (rv_extract d L g2 _ _ _ 11 (by decide) _ _).trans (rv_word d L fl (wL L).val (2 * t1.val) 0 (2 * k.val) 27 (by decide) (by omega) (by decide) g2 hV0 _
          (by rw [k1_off8_eq k ⟨1, by decide⟩]; show 128 * k.val + 16 * 1 + 11 = 1024 * 0 + 64 * (2 * k.val) + 27; omega) _)
      have hwA_28 : pair0_region.sl.v2099_7 d L k g2 = Spec.tcol (blkWord fl (wL L).val (2 * t1.val) (64 * (2 * k.val) + 28)) :=
        (rv_extract d L g2 _ _ _ 12 (by decide) _ _).trans (rv_word d L fl (wL L).val (2 * t1.val) 0 (2 * k.val) 28 (by decide) (by omega) (by decide) g2 hV0 _
          (by rw [k1_off8_eq k ⟨1, by decide⟩]; show 128 * k.val + 16 * 1 + 12 = 1024 * 0 + 64 * (2 * k.val) + 28; omega) _)
      have hwA_29 : pair0_region.sl.v2135_7 d L k g2 = Spec.tcol (blkWord fl (wL L).val (2 * t1.val) (64 * (2 * k.val) + 29)) :=
        (rv_extract d L g2 _ _ _ 13 (by decide) _ _).trans (rv_word d L fl (wL L).val (2 * t1.val) 0 (2 * k.val) 29 (by decide) (by omega) (by decide) g2 hV0 _
          (by rw [k1_off8_eq k ⟨1, by decide⟩]; show 128 * k.val + 16 * 1 + 13 = 1024 * 0 + 64 * (2 * k.val) + 29; omega) _)
      have hwA_30 : pair0_region.sl.v2171_7 d L k g2 = Spec.tcol (blkWord fl (wL L).val (2 * t1.val) (64 * (2 * k.val) + 30)) :=
        (rv_extract d L g2 _ _ _ 14 (by decide) _ _).trans (rv_word d L fl (wL L).val (2 * t1.val) 0 (2 * k.val) 30 (by decide) (by omega) (by decide) g2 hV0 _
          (by rw [k1_off8_eq k ⟨1, by decide⟩]; show 128 * k.val + 16 * 1 + 14 = 1024 * 0 + 64 * (2 * k.val) + 30; omega) _)
      have hwA_31 : pair0_region.sl.v2207_7 d L k g2 = Spec.tcol (blkWord fl (wL L).val (2 * t1.val) (64 * (2 * k.val) + 31)) :=
        (rv_extract d L g2 _ _ _ 15 (by decide) _ _).trans (rv_word d L fl (wL L).val (2 * t1.val) 0 (2 * k.val) 31 (by decide) (by omega) (by decide) g2 hV0 _
          (by rw [k1_off8_eq k ⟨1, by decide⟩]; show 128 * k.val + 16 * 1 + 15 = 1024 * 0 + 64 * (2 * k.val) + 31; omega) _)
      have hwA_32 : pair0_region.sl.v1667_8 d L k g2 = Spec.tcol (blkWord fl (wL L).val (2 * t1.val) (64 * (2 * k.val) + 32)) :=
        (rv_extract d L g2 _ _ _ 0 (by decide) _ _).trans (rv_word d L fl (wL L).val (2 * t1.val) 0 (2 * k.val) 32 (by decide) (by omega) (by decide) g2 hV0 _
          (by rw [k1_off8_eq k ⟨2, by decide⟩]; show 128 * k.val + 16 * 2 + 0 = 1024 * 0 + 64 * (2 * k.val) + 32; omega) _)
      have hwA_33 : pair0_region.sl.v1703_8 d L k g2 = Spec.tcol (blkWord fl (wL L).val (2 * t1.val) (64 * (2 * k.val) + 33)) :=
        (rv_extract d L g2 _ _ _ 1 (by decide) _ _).trans (rv_word d L fl (wL L).val (2 * t1.val) 0 (2 * k.val) 33 (by decide) (by omega) (by decide) g2 hV0 _
          (by rw [k1_off8_eq k ⟨2, by decide⟩]; show 128 * k.val + 16 * 2 + 1 = 1024 * 0 + 64 * (2 * k.val) + 33; omega) _)
      have hwA_34 : pair0_region.sl.v1739_8 d L k g2 = Spec.tcol (blkWord fl (wL L).val (2 * t1.val) (64 * (2 * k.val) + 34)) :=
        (rv_extract d L g2 _ _ _ 2 (by decide) _ _).trans (rv_word d L fl (wL L).val (2 * t1.val) 0 (2 * k.val) 34 (by decide) (by omega) (by decide) g2 hV0 _
          (by rw [k1_off8_eq k ⟨2, by decide⟩]; show 128 * k.val + 16 * 2 + 2 = 1024 * 0 + 64 * (2 * k.val) + 34; omega) _)
      have hwA_35 : pair0_region.sl.v1775_8 d L k g2 = Spec.tcol (blkWord fl (wL L).val (2 * t1.val) (64 * (2 * k.val) + 35)) :=
        (rv_extract d L g2 _ _ _ 3 (by decide) _ _).trans (rv_word d L fl (wL L).val (2 * t1.val) 0 (2 * k.val) 35 (by decide) (by omega) (by decide) g2 hV0 _
          (by rw [k1_off8_eq k ⟨2, by decide⟩]; show 128 * k.val + 16 * 2 + 3 = 1024 * 0 + 64 * (2 * k.val) + 35; omega) _)
      have hwA_36 : pair0_region.sl.v1811_8 d L k g2 = Spec.tcol (blkWord fl (wL L).val (2 * t1.val) (64 * (2 * k.val) + 36)) :=
        (rv_extract d L g2 _ _ _ 4 (by decide) _ _).trans (rv_word d L fl (wL L).val (2 * t1.val) 0 (2 * k.val) 36 (by decide) (by omega) (by decide) g2 hV0 _
          (by rw [k1_off8_eq k ⟨2, by decide⟩]; show 128 * k.val + 16 * 2 + 4 = 1024 * 0 + 64 * (2 * k.val) + 36; omega) _)
      have hwA_37 : pair0_region.sl.v1847_8 d L k g2 = Spec.tcol (blkWord fl (wL L).val (2 * t1.val) (64 * (2 * k.val) + 37)) :=
        (rv_extract d L g2 _ _ _ 5 (by decide) _ _).trans (rv_word d L fl (wL L).val (2 * t1.val) 0 (2 * k.val) 37 (by decide) (by omega) (by decide) g2 hV0 _
          (by rw [k1_off8_eq k ⟨2, by decide⟩]; show 128 * k.val + 16 * 2 + 5 = 1024 * 0 + 64 * (2 * k.val) + 37; omega) _)
      have hwA_38 : pair0_region.sl.v1883_8 d L k g2 = Spec.tcol (blkWord fl (wL L).val (2 * t1.val) (64 * (2 * k.val) + 38)) :=
        (rv_extract d L g2 _ _ _ 6 (by decide) _ _).trans (rv_word d L fl (wL L).val (2 * t1.val) 0 (2 * k.val) 38 (by decide) (by omega) (by decide) g2 hV0 _
          (by rw [k1_off8_eq k ⟨2, by decide⟩]; show 128 * k.val + 16 * 2 + 6 = 1024 * 0 + 64 * (2 * k.val) + 38; omega) _)
      have hwA_39 : pair0_region.sl.v1919_8 d L k g2 = Spec.tcol (blkWord fl (wL L).val (2 * t1.val) (64 * (2 * k.val) + 39)) :=
        (rv_extract d L g2 _ _ _ 7 (by decide) _ _).trans (rv_word d L fl (wL L).val (2 * t1.val) 0 (2 * k.val) 39 (by decide) (by omega) (by decide) g2 hV0 _
          (by rw [k1_off8_eq k ⟨2, by decide⟩]; show 128 * k.val + 16 * 2 + 7 = 1024 * 0 + 64 * (2 * k.val) + 39; omega) _)
      have hwA_40 : pair0_region.sl.v1955_8 d L k g2 = Spec.tcol (blkWord fl (wL L).val (2 * t1.val) (64 * (2 * k.val) + 40)) :=
        (rv_extract d L g2 _ _ _ 8 (by decide) _ _).trans (rv_word d L fl (wL L).val (2 * t1.val) 0 (2 * k.val) 40 (by decide) (by omega) (by decide) g2 hV0 _
          (by rw [k1_off8_eq k ⟨2, by decide⟩]; show 128 * k.val + 16 * 2 + 8 = 1024 * 0 + 64 * (2 * k.val) + 40; omega) _)
      have hwA_41 : pair0_region.sl.v1991_8 d L k g2 = Spec.tcol (blkWord fl (wL L).val (2 * t1.val) (64 * (2 * k.val) + 41)) :=
        (rv_extract d L g2 _ _ _ 9 (by decide) _ _).trans (rv_word d L fl (wL L).val (2 * t1.val) 0 (2 * k.val) 41 (by decide) (by omega) (by decide) g2 hV0 _
          (by rw [k1_off8_eq k ⟨2, by decide⟩]; show 128 * k.val + 16 * 2 + 9 = 1024 * 0 + 64 * (2 * k.val) + 41; omega) _)
      have hwA_42 : pair0_region.sl.v2027_8 d L k g2 = Spec.tcol (blkWord fl (wL L).val (2 * t1.val) (64 * (2 * k.val) + 42)) :=
        (rv_extract d L g2 _ _ _ 10 (by decide) _ _).trans (rv_word d L fl (wL L).val (2 * t1.val) 0 (2 * k.val) 42 (by decide) (by omega) (by decide) g2 hV0 _
          (by rw [k1_off8_eq k ⟨2, by decide⟩]; show 128 * k.val + 16 * 2 + 10 = 1024 * 0 + 64 * (2 * k.val) + 42; omega) _)
      have hwA_43 : pair0_region.sl.v2063_8 d L k g2 = Spec.tcol (blkWord fl (wL L).val (2 * t1.val) (64 * (2 * k.val) + 43)) :=
        (rv_extract d L g2 _ _ _ 11 (by decide) _ _).trans (rv_word d L fl (wL L).val (2 * t1.val) 0 (2 * k.val) 43 (by decide) (by omega) (by decide) g2 hV0 _
          (by rw [k1_off8_eq k ⟨2, by decide⟩]; show 128 * k.val + 16 * 2 + 11 = 1024 * 0 + 64 * (2 * k.val) + 43; omega) _)
      have hwA_44 : pair0_region.sl.v2099_8 d L k g2 = Spec.tcol (blkWord fl (wL L).val (2 * t1.val) (64 * (2 * k.val) + 44)) :=
        (rv_extract d L g2 _ _ _ 12 (by decide) _ _).trans (rv_word d L fl (wL L).val (2 * t1.val) 0 (2 * k.val) 44 (by decide) (by omega) (by decide) g2 hV0 _
          (by rw [k1_off8_eq k ⟨2, by decide⟩]; show 128 * k.val + 16 * 2 + 12 = 1024 * 0 + 64 * (2 * k.val) + 44; omega) _)
      have hwA_45 : pair0_region.sl.v2135_8 d L k g2 = Spec.tcol (blkWord fl (wL L).val (2 * t1.val) (64 * (2 * k.val) + 45)) :=
        (rv_extract d L g2 _ _ _ 13 (by decide) _ _).trans (rv_word d L fl (wL L).val (2 * t1.val) 0 (2 * k.val) 45 (by decide) (by omega) (by decide) g2 hV0 _
          (by rw [k1_off8_eq k ⟨2, by decide⟩]; show 128 * k.val + 16 * 2 + 13 = 1024 * 0 + 64 * (2 * k.val) + 45; omega) _)
      have hwA_46 : pair0_region.sl.v2171_8 d L k g2 = Spec.tcol (blkWord fl (wL L).val (2 * t1.val) (64 * (2 * k.val) + 46)) :=
        (rv_extract d L g2 _ _ _ 14 (by decide) _ _).trans (rv_word d L fl (wL L).val (2 * t1.val) 0 (2 * k.val) 46 (by decide) (by omega) (by decide) g2 hV0 _
          (by rw [k1_off8_eq k ⟨2, by decide⟩]; show 128 * k.val + 16 * 2 + 14 = 1024 * 0 + 64 * (2 * k.val) + 46; omega) _)
      have hwA_47 : pair0_region.sl.v2207_8 d L k g2 = Spec.tcol (blkWord fl (wL L).val (2 * t1.val) (64 * (2 * k.val) + 47)) :=
        (rv_extract d L g2 _ _ _ 15 (by decide) _ _).trans (rv_word d L fl (wL L).val (2 * t1.val) 0 (2 * k.val) 47 (by decide) (by omega) (by decide) g2 hV0 _
          (by rw [k1_off8_eq k ⟨2, by decide⟩]; show 128 * k.val + 16 * 2 + 15 = 1024 * 0 + 64 * (2 * k.val) + 47; omega) _)
      have hwA_48 : pair0_region.sl.v1456_1 d L k g2 = Spec.tcol (blkWord fl (wL L).val (2 * t1.val) (64 * (2 * k.val) + 48)) :=
        (rv_extract d L g2 _ _ _ 0 (by decide) _ _).trans (rv_word d L fl (wL L).val (2 * t1.val) 0 (2 * k.val) 48 (by decide) (by omega) (by decide) g2 hV0 _
          (by rw [k1_off25_eq k]; show 128 * k.val + 48 + 0 = 1024 * 0 + 64 * (2 * k.val) + 48; omega) _)
      have hwA_49 : pair0_region.sl.v1490_1 d L k g2 = Spec.tcol (blkWord fl (wL L).val (2 * t1.val) (64 * (2 * k.val) + 49)) :=
        (rv_extract d L g2 _ _ _ 1 (by decide) _ _).trans (rv_word d L fl (wL L).val (2 * t1.val) 0 (2 * k.val) 49 (by decide) (by omega) (by decide) g2 hV0 _
          (by rw [k1_off25_eq k]; show 128 * k.val + 48 + 1 = 1024 * 0 + 64 * (2 * k.val) + 49; omega) _)
      have aA0_0 : pair0_region.sl.v1445_1 = AccMath.accVec (rowF fl tab (wL L).val (2 * t1.val) (2 * k.val)) (offF fl (wL L).val (2 * t1.val) (2 * k.val)) 0 0 := acc_zero fl tab (wL L).val (2 * t1.val) (2 * k.val) 0
      have aA0_1 : pair0_region.sl.v1675_6 d L tab k r g1 g2 hR hin = AccMath.accVec (rowF fl tab (wL L).val (2 * t1.val) (2 * k.val)) (offF fl (wL L).val (2 * t1.val) (2 * k.val)) 0 1 := by
        unfold pair0_region.sl.v1675_6; rw [aA0_0]
        exact acc_step d L fl tab (wL L).val (2 * t1.val) (2 * k.val) 0 _ hRA ⟨0, by decide⟩ ⟨0, by decide⟩ 0#32 rfl _ hwA_0 _ (k1_off9_form ⟨0, by decide⟩ _ _) _ _
      have aA0_2 : pair0_region.sl.v1711_6 d L tab k r g1 g2 hR hin = AccMath.accVec (rowF fl tab (wL L).val (2 * t1.val) (2 * k.val)) (offF fl (wL L).val (2 * t1.val) (2 * k.val)) 0 2 := by
        unfold pair0_region.sl.v1711_6; rw [aA0_1]
        exact acc_step d L fl tab (wL L).val (2 * t1.val) (2 * k.val) 0 _ hRA ⟨1, by decide⟩ ⟨0, by decide⟩ 0#32 rfl _ hwA_1 _ (k1_off10_form ⟨0, by decide⟩ _ _) _ _
      have aA0_3 : pair0_region.sl.v1747_6 d L tab k r g1 g2 hR hin = AccMath.accVec (rowF fl tab (wL L).val (2 * t1.val) (2 * k.val)) (offF fl (wL L).val (2 * t1.val) (2 * k.val)) 0 3 := by
        unfold pair0_region.sl.v1747_6; rw [aA0_2]
        exact acc_step d L fl tab (wL L).val (2 * t1.val) (2 * k.val) 0 _ hRA ⟨2, by decide⟩ ⟨0, by decide⟩ 0#32 rfl _ hwA_2 _ (k1_off11_form ⟨0, by decide⟩ _ _) _ _
      have aA0_4 : pair0_region.sl.v1783_6 d L tab k r g1 g2 hR hin = AccMath.accVec (rowF fl tab (wL L).val (2 * t1.val) (2 * k.val)) (offF fl (wL L).val (2 * t1.val) (2 * k.val)) 0 4 := by
        unfold pair0_region.sl.v1783_6; rw [aA0_3]
        exact acc_step d L fl tab (wL L).val (2 * t1.val) (2 * k.val) 0 _ hRA ⟨3, by decide⟩ ⟨0, by decide⟩ 0#32 rfl _ hwA_3 _ (k1_off12_form ⟨0, by decide⟩ _ _) _ _
      have aA0_5 : pair0_region.sl.v1819_6 d L tab k r g1 g2 hR hin = AccMath.accVec (rowF fl tab (wL L).val (2 * t1.val) (2 * k.val)) (offF fl (wL L).val (2 * t1.val) (2 * k.val)) 0 5 := by
        unfold pair0_region.sl.v1819_6; rw [aA0_4]
        exact acc_step d L fl tab (wL L).val (2 * t1.val) (2 * k.val) 0 _ hRA ⟨4, by decide⟩ ⟨0, by decide⟩ 0#32 rfl _ hwA_4 _ (k1_off13_form ⟨0, by decide⟩ _ _) _ _
      have aA0_6 : pair0_region.sl.v1855_6 d L tab k r g1 g2 hR hin = AccMath.accVec (rowF fl tab (wL L).val (2 * t1.val) (2 * k.val)) (offF fl (wL L).val (2 * t1.val) (2 * k.val)) 0 6 := by
        unfold pair0_region.sl.v1855_6; rw [aA0_5]
        exact acc_step d L fl tab (wL L).val (2 * t1.val) (2 * k.val) 0 _ hRA ⟨5, by decide⟩ ⟨0, by decide⟩ 0#32 rfl _ hwA_5 _ (k1_off14_form ⟨0, by decide⟩ _ _) _ _
      have aA0_7 : pair0_region.sl.v1891_6 d L tab k r g1 g2 hR hin = AccMath.accVec (rowF fl tab (wL L).val (2 * t1.val) (2 * k.val)) (offF fl (wL L).val (2 * t1.val) (2 * k.val)) 0 7 := by
        unfold pair0_region.sl.v1891_6; rw [aA0_6]
        exact acc_step d L fl tab (wL L).val (2 * t1.val) (2 * k.val) 0 _ hRA ⟨6, by decide⟩ ⟨0, by decide⟩ 0#32 rfl _ hwA_6 _ (k1_off15_form ⟨0, by decide⟩ _ _) _ _
      have aA0_8 : pair0_region.sl.v1927_6 d L tab k r g1 g2 hR hin = AccMath.accVec (rowF fl tab (wL L).val (2 * t1.val) (2 * k.val)) (offF fl (wL L).val (2 * t1.val) (2 * k.val)) 0 8 := by
        unfold pair0_region.sl.v1927_6; rw [aA0_7]
        exact acc_step d L fl tab (wL L).val (2 * t1.val) (2 * k.val) 0 _ hRA ⟨7, by decide⟩ ⟨0, by decide⟩ 0#32 rfl _ hwA_7 _ (k1_off16_form ⟨0, by decide⟩ _ _) _ _
      have aA0_9 : pair0_region.sl.v1963_6 d L tab k r g1 g2 hR hin = AccMath.accVec (rowF fl tab (wL L).val (2 * t1.val) (2 * k.val)) (offF fl (wL L).val (2 * t1.val) (2 * k.val)) 0 9 := by
        unfold pair0_region.sl.v1963_6; rw [aA0_8]
        exact acc_step d L fl tab (wL L).val (2 * t1.val) (2 * k.val) 0 _ hRA ⟨8, by decide⟩ ⟨0, by decide⟩ 0#32 rfl _ hwA_8 _ (k1_off17_form ⟨0, by decide⟩ _ _) _ _
      have aA0_10 : pair0_region.sl.v1999_6 d L tab k r g1 g2 hR hin = AccMath.accVec (rowF fl tab (wL L).val (2 * t1.val) (2 * k.val)) (offF fl (wL L).val (2 * t1.val) (2 * k.val)) 0 10 := by
        unfold pair0_region.sl.v1999_6; rw [aA0_9]
        exact acc_step d L fl tab (wL L).val (2 * t1.val) (2 * k.val) 0 _ hRA ⟨9, by decide⟩ ⟨0, by decide⟩ 0#32 rfl _ hwA_9 _ (k1_off18_form ⟨0, by decide⟩ _ _) _ _
      have aA0_11 : pair0_region.sl.v2035_6 d L tab k r g1 g2 hR hin = AccMath.accVec (rowF fl tab (wL L).val (2 * t1.val) (2 * k.val)) (offF fl (wL L).val (2 * t1.val) (2 * k.val)) 0 11 := by
        unfold pair0_region.sl.v2035_6; rw [aA0_10]
        exact acc_step d L fl tab (wL L).val (2 * t1.val) (2 * k.val) 0 _ hRA ⟨10, by decide⟩ ⟨0, by decide⟩ 0#32 rfl _ hwA_10 _ (k1_off19_form ⟨0, by decide⟩ _ _) _ _
      have aA0_12 : pair0_region.sl.v2071_6 d L tab k r g1 g2 hR hin = AccMath.accVec (rowF fl tab (wL L).val (2 * t1.val) (2 * k.val)) (offF fl (wL L).val (2 * t1.val) (2 * k.val)) 0 12 := by
        unfold pair0_region.sl.v2071_6; rw [aA0_11]
        exact acc_step d L fl tab (wL L).val (2 * t1.val) (2 * k.val) 0 _ hRA ⟨11, by decide⟩ ⟨0, by decide⟩ 0#32 rfl _ hwA_11 _ (k1_off20_form ⟨0, by decide⟩ _ _) _ _
      have aA0_13 : pair0_region.sl.v2107_6 d L tab k r g1 g2 hR hin = AccMath.accVec (rowF fl tab (wL L).val (2 * t1.val) (2 * k.val)) (offF fl (wL L).val (2 * t1.val) (2 * k.val)) 0 13 := by
        unfold pair0_region.sl.v2107_6; rw [aA0_12]
        exact acc_step d L fl tab (wL L).val (2 * t1.val) (2 * k.val) 0 _ hRA ⟨12, by decide⟩ ⟨0, by decide⟩ 0#32 rfl _ hwA_12 _ (k1_off21_form ⟨0, by decide⟩ _ _) _ _
      have aA0_14 : pair0_region.sl.v2143_6 d L tab k r g1 g2 hR hin = AccMath.accVec (rowF fl tab (wL L).val (2 * t1.val) (2 * k.val)) (offF fl (wL L).val (2 * t1.val) (2 * k.val)) 0 14 := by
        unfold pair0_region.sl.v2143_6; rw [aA0_13]
        exact acc_step d L fl tab (wL L).val (2 * t1.val) (2 * k.val) 0 _ hRA ⟨13, by decide⟩ ⟨0, by decide⟩ 0#32 rfl _ hwA_13 _ (k1_off22_form ⟨0, by decide⟩ _ _) _ _
      have aA0_15 : pair0_region.sl.v2179_6 d L tab k r g1 g2 hR hin = AccMath.accVec (rowF fl tab (wL L).val (2 * t1.val) (2 * k.val)) (offF fl (wL L).val (2 * t1.val) (2 * k.val)) 0 15 := by
        unfold pair0_region.sl.v2179_6; rw [aA0_14]
        exact acc_step d L fl tab (wL L).val (2 * t1.val) (2 * k.val) 0 _ hRA ⟨14, by decide⟩ ⟨0, by decide⟩ 0#32 rfl _ hwA_14 _ (k1_off23_form ⟨0, by decide⟩ _ _) _ _
      have aA0_16 : pair0_region.sl.v2215_6 d L tab k r g1 g2 hR hin = AccMath.accVec (rowF fl tab (wL L).val (2 * t1.val) (2 * k.val)) (offF fl (wL L).val (2 * t1.val) (2 * k.val)) 0 16 := by
        unfold pair0_region.sl.v2215_6; rw [aA0_15]
        exact acc_step d L fl tab (wL L).val (2 * t1.val) (2 * k.val) 0 _ hRA ⟨15, by decide⟩ ⟨0, by decide⟩ 0#32 rfl _ hwA_15 _ (k1_off24_form ⟨0, by decide⟩ _ _) _ _
      have aA0_17 : pair0_region.sl.v1675_7 d L tab k r g1 g2 hR hin = AccMath.accVec (rowF fl tab (wL L).val (2 * t1.val) (2 * k.val)) (offF fl (wL L).val (2 * t1.val) (2 * k.val)) 0 17 := by
        unfold pair0_region.sl.v1675_7; rw [aA0_16]
        exact acc_step d L fl tab (wL L).val (2 * t1.val) (2 * k.val) 0 _ hRA ⟨16, by decide⟩ ⟨0, by decide⟩ 0#32 rfl _ hwA_16 _ (k1_off9_form ⟨1, by decide⟩ _ _) _ _
      have aA0_18 : pair0_region.sl.v1711_7 d L tab k r g1 g2 hR hin = AccMath.accVec (rowF fl tab (wL L).val (2 * t1.val) (2 * k.val)) (offF fl (wL L).val (2 * t1.val) (2 * k.val)) 0 18 := by
        unfold pair0_region.sl.v1711_7; rw [aA0_17]
        exact acc_step d L fl tab (wL L).val (2 * t1.val) (2 * k.val) 0 _ hRA ⟨17, by decide⟩ ⟨0, by decide⟩ 0#32 rfl _ hwA_17 _ (k1_off10_form ⟨1, by decide⟩ _ _) _ _
      have aA0_19 : pair0_region.sl.v1747_7 d L tab k r g1 g2 hR hin = AccMath.accVec (rowF fl tab (wL L).val (2 * t1.val) (2 * k.val)) (offF fl (wL L).val (2 * t1.val) (2 * k.val)) 0 19 := by
        unfold pair0_region.sl.v1747_7; rw [aA0_18]
        exact acc_step d L fl tab (wL L).val (2 * t1.val) (2 * k.val) 0 _ hRA ⟨18, by decide⟩ ⟨0, by decide⟩ 0#32 rfl _ hwA_18 _ (k1_off11_form ⟨1, by decide⟩ _ _) _ _
      have aA0_20 : pair0_region.sl.v1783_7 d L tab k r g1 g2 hR hin = AccMath.accVec (rowF fl tab (wL L).val (2 * t1.val) (2 * k.val)) (offF fl (wL L).val (2 * t1.val) (2 * k.val)) 0 20 := by
        unfold pair0_region.sl.v1783_7; rw [aA0_19]
        exact acc_step d L fl tab (wL L).val (2 * t1.val) (2 * k.val) 0 _ hRA ⟨19, by decide⟩ ⟨0, by decide⟩ 0#32 rfl _ hwA_19 _ (k1_off12_form ⟨1, by decide⟩ _ _) _ _
      have aA0_21 : pair0_region.sl.v1819_7 d L tab k r g1 g2 hR hin = AccMath.accVec (rowF fl tab (wL L).val (2 * t1.val) (2 * k.val)) (offF fl (wL L).val (2 * t1.val) (2 * k.val)) 0 21 := by
        unfold pair0_region.sl.v1819_7; rw [aA0_20]
        exact acc_step d L fl tab (wL L).val (2 * t1.val) (2 * k.val) 0 _ hRA ⟨20, by decide⟩ ⟨0, by decide⟩ 0#32 rfl _ hwA_20 _ (k1_off13_form ⟨1, by decide⟩ _ _) _ _
      have aA0_22 : pair0_region.sl.v1855_7 d L tab k r g1 g2 hR hin = AccMath.accVec (rowF fl tab (wL L).val (2 * t1.val) (2 * k.val)) (offF fl (wL L).val (2 * t1.val) (2 * k.val)) 0 22 := by
        unfold pair0_region.sl.v1855_7; rw [aA0_21]
        exact acc_step d L fl tab (wL L).val (2 * t1.val) (2 * k.val) 0 _ hRA ⟨21, by decide⟩ ⟨0, by decide⟩ 0#32 rfl _ hwA_21 _ (k1_off14_form ⟨1, by decide⟩ _ _) _ _
      have aA0_23 : pair0_region.sl.v1891_7 d L tab k r g1 g2 hR hin = AccMath.accVec (rowF fl tab (wL L).val (2 * t1.val) (2 * k.val)) (offF fl (wL L).val (2 * t1.val) (2 * k.val)) 0 23 := by
        unfold pair0_region.sl.v1891_7; rw [aA0_22]
        exact acc_step d L fl tab (wL L).val (2 * t1.val) (2 * k.val) 0 _ hRA ⟨22, by decide⟩ ⟨0, by decide⟩ 0#32 rfl _ hwA_22 _ (k1_off15_form ⟨1, by decide⟩ _ _) _ _
      have aA0_24 : pair0_region.sl.v1927_7 d L tab k r g1 g2 hR hin = AccMath.accVec (rowF fl tab (wL L).val (2 * t1.val) (2 * k.val)) (offF fl (wL L).val (2 * t1.val) (2 * k.val)) 0 24 := by
        unfold pair0_region.sl.v1927_7; rw [aA0_23]
        exact acc_step d L fl tab (wL L).val (2 * t1.val) (2 * k.val) 0 _ hRA ⟨23, by decide⟩ ⟨0, by decide⟩ 0#32 rfl _ hwA_23 _ (k1_off16_form ⟨1, by decide⟩ _ _) _ _
      have aA0_25 : pair0_region.sl.v1963_7 d L tab k r g1 g2 hR hin = AccMath.accVec (rowF fl tab (wL L).val (2 * t1.val) (2 * k.val)) (offF fl (wL L).val (2 * t1.val) (2 * k.val)) 0 25 := by
        unfold pair0_region.sl.v1963_7; rw [aA0_24]
        exact acc_step d L fl tab (wL L).val (2 * t1.val) (2 * k.val) 0 _ hRA ⟨24, by decide⟩ ⟨0, by decide⟩ 0#32 rfl _ hwA_24 _ (k1_off17_form ⟨1, by decide⟩ _ _) _ _
      have aA0_26 : pair0_region.sl.v1999_7 d L tab k r g1 g2 hR hin = AccMath.accVec (rowF fl tab (wL L).val (2 * t1.val) (2 * k.val)) (offF fl (wL L).val (2 * t1.val) (2 * k.val)) 0 26 := by
        unfold pair0_region.sl.v1999_7; rw [aA0_25]
        exact acc_step d L fl tab (wL L).val (2 * t1.val) (2 * k.val) 0 _ hRA ⟨25, by decide⟩ ⟨0, by decide⟩ 0#32 rfl _ hwA_25 _ (k1_off18_form ⟨1, by decide⟩ _ _) _ _
      have aA0_27 : pair0_region.sl.v2035_7 d L tab k r g1 g2 hR hin = AccMath.accVec (rowF fl tab (wL L).val (2 * t1.val) (2 * k.val)) (offF fl (wL L).val (2 * t1.val) (2 * k.val)) 0 27 := by
        unfold pair0_region.sl.v2035_7; rw [aA0_26]
        exact acc_step d L fl tab (wL L).val (2 * t1.val) (2 * k.val) 0 _ hRA ⟨26, by decide⟩ ⟨0, by decide⟩ 0#32 rfl _ hwA_26 _ (k1_off19_form ⟨1, by decide⟩ _ _) _ _
      have aA0_28 : pair0_region.sl.v2071_7 d L tab k r g1 g2 hR hin = AccMath.accVec (rowF fl tab (wL L).val (2 * t1.val) (2 * k.val)) (offF fl (wL L).val (2 * t1.val) (2 * k.val)) 0 28 := by
        unfold pair0_region.sl.v2071_7; rw [aA0_27]
        exact acc_step d L fl tab (wL L).val (2 * t1.val) (2 * k.val) 0 _ hRA ⟨27, by decide⟩ ⟨0, by decide⟩ 0#32 rfl _ hwA_27 _ (k1_off20_form ⟨1, by decide⟩ _ _) _ _
      have aA0_29 : pair0_region.sl.v2107_7 d L tab k r g1 g2 hR hin = AccMath.accVec (rowF fl tab (wL L).val (2 * t1.val) (2 * k.val)) (offF fl (wL L).val (2 * t1.val) (2 * k.val)) 0 29 := by
        unfold pair0_region.sl.v2107_7; rw [aA0_28]
        exact acc_step d L fl tab (wL L).val (2 * t1.val) (2 * k.val) 0 _ hRA ⟨28, by decide⟩ ⟨0, by decide⟩ 0#32 rfl _ hwA_28 _ (k1_off21_form ⟨1, by decide⟩ _ _) _ _
      have aA0_30 : pair0_region.sl.v2143_7 d L tab k r g1 g2 hR hin = AccMath.accVec (rowF fl tab (wL L).val (2 * t1.val) (2 * k.val)) (offF fl (wL L).val (2 * t1.val) (2 * k.val)) 0 30 := by
        unfold pair0_region.sl.v2143_7; rw [aA0_29]
        exact acc_step d L fl tab (wL L).val (2 * t1.val) (2 * k.val) 0 _ hRA ⟨29, by decide⟩ ⟨0, by decide⟩ 0#32 rfl _ hwA_29 _ (k1_off22_form ⟨1, by decide⟩ _ _) _ _
      have aA0_31 : pair0_region.sl.v2179_7 d L tab k r g1 g2 hR hin = AccMath.accVec (rowF fl tab (wL L).val (2 * t1.val) (2 * k.val)) (offF fl (wL L).val (2 * t1.val) (2 * k.val)) 0 31 := by
        unfold pair0_region.sl.v2179_7; rw [aA0_30]
        exact acc_step d L fl tab (wL L).val (2 * t1.val) (2 * k.val) 0 _ hRA ⟨30, by decide⟩ ⟨0, by decide⟩ 0#32 rfl _ hwA_30 _ (k1_off23_form ⟨1, by decide⟩ _ _) _ _
      have aA0_32 : pair0_region.sl.v2215_7 d L tab k r g1 g2 hR hin = AccMath.accVec (rowF fl tab (wL L).val (2 * t1.val) (2 * k.val)) (offF fl (wL L).val (2 * t1.val) (2 * k.val)) 0 32 := by
        unfold pair0_region.sl.v2215_7; rw [aA0_31]
        exact acc_step d L fl tab (wL L).val (2 * t1.val) (2 * k.val) 0 _ hRA ⟨31, by decide⟩ ⟨0, by decide⟩ 0#32 rfl _ hwA_31 _ (k1_off24_form ⟨1, by decide⟩ _ _) _ _
      have aA0_33 : pair0_region.sl.v1675_8 d L tab k r g1 g2 hR hin = AccMath.accVec (rowF fl tab (wL L).val (2 * t1.val) (2 * k.val)) (offF fl (wL L).val (2 * t1.val) (2 * k.val)) 0 33 := by
        unfold pair0_region.sl.v1675_8; rw [aA0_32]
        exact acc_step d L fl tab (wL L).val (2 * t1.val) (2 * k.val) 0 _ hRA ⟨32, by decide⟩ ⟨0, by decide⟩ 0#32 rfl _ hwA_32 _ (k1_off9_form ⟨2, by decide⟩ _ _) _ _
      have aA0_34 : pair0_region.sl.v1711_8 d L tab k r g1 g2 hR hin = AccMath.accVec (rowF fl tab (wL L).val (2 * t1.val) (2 * k.val)) (offF fl (wL L).val (2 * t1.val) (2 * k.val)) 0 34 := by
        unfold pair0_region.sl.v1711_8; rw [aA0_33]
        exact acc_step d L fl tab (wL L).val (2 * t1.val) (2 * k.val) 0 _ hRA ⟨33, by decide⟩ ⟨0, by decide⟩ 0#32 rfl _ hwA_33 _ (k1_off10_form ⟨2, by decide⟩ _ _) _ _
      have aA0_35 : pair0_region.sl.v1747_8 d L tab k r g1 g2 hR hin = AccMath.accVec (rowF fl tab (wL L).val (2 * t1.val) (2 * k.val)) (offF fl (wL L).val (2 * t1.val) (2 * k.val)) 0 35 := by
        unfold pair0_region.sl.v1747_8; rw [aA0_34]
        exact acc_step d L fl tab (wL L).val (2 * t1.val) (2 * k.val) 0 _ hRA ⟨34, by decide⟩ ⟨0, by decide⟩ 0#32 rfl _ hwA_34 _ (k1_off11_form ⟨2, by decide⟩ _ _) _ _
      have aA0_36 : pair0_region.sl.v1783_8 d L tab k r g1 g2 hR hin = AccMath.accVec (rowF fl tab (wL L).val (2 * t1.val) (2 * k.val)) (offF fl (wL L).val (2 * t1.val) (2 * k.val)) 0 36 := by
        unfold pair0_region.sl.v1783_8; rw [aA0_35]
        exact acc_step d L fl tab (wL L).val (2 * t1.val) (2 * k.val) 0 _ hRA ⟨35, by decide⟩ ⟨0, by decide⟩ 0#32 rfl _ hwA_35 _ (k1_off12_form ⟨2, by decide⟩ _ _) _ _
      have aA0_37 : pair0_region.sl.v1819_8 d L tab k r g1 g2 hR hin = AccMath.accVec (rowF fl tab (wL L).val (2 * t1.val) (2 * k.val)) (offF fl (wL L).val (2 * t1.val) (2 * k.val)) 0 37 := by
        unfold pair0_region.sl.v1819_8; rw [aA0_36]
        exact acc_step d L fl tab (wL L).val (2 * t1.val) (2 * k.val) 0 _ hRA ⟨36, by decide⟩ ⟨0, by decide⟩ 0#32 rfl _ hwA_36 _ (k1_off13_form ⟨2, by decide⟩ _ _) _ _
      have aA0_38 : pair0_region.sl.v1855_8 d L tab k r g1 g2 hR hin = AccMath.accVec (rowF fl tab (wL L).val (2 * t1.val) (2 * k.val)) (offF fl (wL L).val (2 * t1.val) (2 * k.val)) 0 38 := by
        unfold pair0_region.sl.v1855_8; rw [aA0_37]
        exact acc_step d L fl tab (wL L).val (2 * t1.val) (2 * k.val) 0 _ hRA ⟨37, by decide⟩ ⟨0, by decide⟩ 0#32 rfl _ hwA_37 _ (k1_off14_form ⟨2, by decide⟩ _ _) _ _
      have aA0_39 : pair0_region.sl.v1891_8 d L tab k r g1 g2 hR hin = AccMath.accVec (rowF fl tab (wL L).val (2 * t1.val) (2 * k.val)) (offF fl (wL L).val (2 * t1.val) (2 * k.val)) 0 39 := by
        unfold pair0_region.sl.v1891_8; rw [aA0_38]
        exact acc_step d L fl tab (wL L).val (2 * t1.val) (2 * k.val) 0 _ hRA ⟨38, by decide⟩ ⟨0, by decide⟩ 0#32 rfl _ hwA_38 _ (k1_off15_form ⟨2, by decide⟩ _ _) _ _
      have aA0_40 : pair0_region.sl.v1927_8 d L tab k r g1 g2 hR hin = AccMath.accVec (rowF fl tab (wL L).val (2 * t1.val) (2 * k.val)) (offF fl (wL L).val (2 * t1.val) (2 * k.val)) 0 40 := by
        unfold pair0_region.sl.v1927_8; rw [aA0_39]
        exact acc_step d L fl tab (wL L).val (2 * t1.val) (2 * k.val) 0 _ hRA ⟨39, by decide⟩ ⟨0, by decide⟩ 0#32 rfl _ hwA_39 _ (k1_off16_form ⟨2, by decide⟩ _ _) _ _
      have aA0_41 : pair0_region.sl.v1963_8 d L tab k r g1 g2 hR hin = AccMath.accVec (rowF fl tab (wL L).val (2 * t1.val) (2 * k.val)) (offF fl (wL L).val (2 * t1.val) (2 * k.val)) 0 41 := by
        unfold pair0_region.sl.v1963_8; rw [aA0_40]
        exact acc_step d L fl tab (wL L).val (2 * t1.val) (2 * k.val) 0 _ hRA ⟨40, by decide⟩ ⟨0, by decide⟩ 0#32 rfl _ hwA_40 _ (k1_off17_form ⟨2, by decide⟩ _ _) _ _
      have aA0_42 : pair0_region.sl.v1999_8 d L tab k r g1 g2 hR hin = AccMath.accVec (rowF fl tab (wL L).val (2 * t1.val) (2 * k.val)) (offF fl (wL L).val (2 * t1.val) (2 * k.val)) 0 42 := by
        unfold pair0_region.sl.v1999_8; rw [aA0_41]
        exact acc_step d L fl tab (wL L).val (2 * t1.val) (2 * k.val) 0 _ hRA ⟨41, by decide⟩ ⟨0, by decide⟩ 0#32 rfl _ hwA_41 _ (k1_off18_form ⟨2, by decide⟩ _ _) _ _
      have aA0_43 : pair0_region.sl.v2035_8 d L tab k r g1 g2 hR hin = AccMath.accVec (rowF fl tab (wL L).val (2 * t1.val) (2 * k.val)) (offF fl (wL L).val (2 * t1.val) (2 * k.val)) 0 43 := by
        unfold pair0_region.sl.v2035_8; rw [aA0_42]
        exact acc_step d L fl tab (wL L).val (2 * t1.val) (2 * k.val) 0 _ hRA ⟨42, by decide⟩ ⟨0, by decide⟩ 0#32 rfl _ hwA_42 _ (k1_off19_form ⟨2, by decide⟩ _ _) _ _
      have aA0_44 : pair0_region.sl.v2071_8 d L tab k r g1 g2 hR hin = AccMath.accVec (rowF fl tab (wL L).val (2 * t1.val) (2 * k.val)) (offF fl (wL L).val (2 * t1.val) (2 * k.val)) 0 44 := by
        unfold pair0_region.sl.v2071_8; rw [aA0_43]
        exact acc_step d L fl tab (wL L).val (2 * t1.val) (2 * k.val) 0 _ hRA ⟨43, by decide⟩ ⟨0, by decide⟩ 0#32 rfl _ hwA_43 _ (k1_off20_form ⟨2, by decide⟩ _ _) _ _
      have aA0_45 : pair0_region.sl.v2107_8 d L tab k r g1 g2 hR hin = AccMath.accVec (rowF fl tab (wL L).val (2 * t1.val) (2 * k.val)) (offF fl (wL L).val (2 * t1.val) (2 * k.val)) 0 45 := by
        unfold pair0_region.sl.v2107_8; rw [aA0_44]
        exact acc_step d L fl tab (wL L).val (2 * t1.val) (2 * k.val) 0 _ hRA ⟨44, by decide⟩ ⟨0, by decide⟩ 0#32 rfl _ hwA_44 _ (k1_off21_form ⟨2, by decide⟩ _ _) _ _
      have aA0_46 : pair0_region.sl.v2143_8 d L tab k r g1 g2 hR hin = AccMath.accVec (rowF fl tab (wL L).val (2 * t1.val) (2 * k.val)) (offF fl (wL L).val (2 * t1.val) (2 * k.val)) 0 46 := by
        unfold pair0_region.sl.v2143_8; rw [aA0_45]
        exact acc_step d L fl tab (wL L).val (2 * t1.val) (2 * k.val) 0 _ hRA ⟨45, by decide⟩ ⟨0, by decide⟩ 0#32 rfl _ hwA_45 _ (k1_off22_form ⟨2, by decide⟩ _ _) _ _
      have aA0_47 : pair0_region.sl.v2179_8 d L tab k r g1 g2 hR hin = AccMath.accVec (rowF fl tab (wL L).val (2 * t1.val) (2 * k.val)) (offF fl (wL L).val (2 * t1.val) (2 * k.val)) 0 47 := by
        unfold pair0_region.sl.v2179_8; rw [aA0_46]
        exact acc_step d L fl tab (wL L).val (2 * t1.val) (2 * k.val) 0 _ hRA ⟨46, by decide⟩ ⟨0, by decide⟩ 0#32 rfl _ hwA_46 _ (k1_off23_form ⟨2, by decide⟩ _ _) _ _
      have aA0_48 : pair0_region.sl.v2215_8 d L tab k r g1 g2 hR hin = AccMath.accVec (rowF fl tab (wL L).val (2 * t1.val) (2 * k.val)) (offF fl (wL L).val (2 * t1.val) (2 * k.val)) 0 48 := by
        unfold pair0_region.sl.v2215_8; rw [aA0_47]
        exact acc_step d L fl tab (wL L).val (2 * t1.val) (2 * k.val) 0 _ hRA ⟨47, by decide⟩ ⟨0, by decide⟩ 0#32 rfl _ hwA_47 _ (k1_off24_form ⟨2, by decide⟩ _ _) _ _
      have aA0_49 : pair0_region.sl.v1464_1 d L tab k r g1 g2 hR hin = AccMath.accVec (rowF fl tab (wL L).val (2 * t1.val) (2 * k.val)) (offF fl (wL L).val (2 * t1.val) (2 * k.val)) 0 49 := by
        unfold pair0_region.sl.v1464_1; rw [aA0_48]
        exact acc_step d L fl tab (wL L).val (2 * t1.val) (2 * k.val) 0 _ hRA ⟨48, by decide⟩ ⟨0, by decide⟩ 0#32 rfl _ hwA_48 _ (k1_off26_form _ _) _ _
      have aA0_50 : pair0_region.sl.v1498_1 d L tab k r g1 g2 hR hin = AccMath.accVec (rowF fl tab (wL L).val (2 * t1.val) (2 * k.val)) (offF fl (wL L).val (2 * t1.val) (2 * k.val)) 0 50 := by
        unfold pair0_region.sl.v1498_1; rw [aA0_49]
        exact acc_step d L fl tab (wL L).val (2 * t1.val) (2 * k.val) 0 _ hRA ⟨49, by decide⟩ ⟨0, by decide⟩ 0#32 rfl _ hwA_49 _ (k1_off27_form _ _) _ _
      have hPA0 : ∀ x : S1x1x16.Idx, pair0_region.sl.v1527_1 d L tab k r g1 g2 hR hin x = Spec.bagPartial fl tab (128 * (wL L).val + 16 * (2 * t1.val) + (2 * k.val)) (16 * 0 + (x 2).val) 50 := fun x => by
        unfold pair0_region.sl.v1527_1; rw [aA0_50]; exact payload_ok fl tab (wL L).val (2 * t1.val) (2 * k.val) ⟨0, by decide⟩ _ x
      have aA1_0 : pair0_region.sl.v1445_1 = AccMath.accVec (rowF fl tab (wL L).val (2 * t1.val) (2 * k.val)) (offF fl (wL L).val (2 * t1.val) (2 * k.val)) 1 0 := acc_zero fl tab (wL L).val (2 * t1.val) (2 * k.val) 1
      have aA1_1 : pair0_region.sl.v1683_6 d L tab k r g1 g2 hR hin = AccMath.accVec (rowF fl tab (wL L).val (2 * t1.val) (2 * k.val)) (offF fl (wL L).val (2 * t1.val) (2 * k.val)) 1 1 := by
        unfold pair0_region.sl.v1683_6; rw [aA1_0]
        exact acc_step d L fl tab (wL L).val (2 * t1.val) (2 * k.val) 0 _ hRA ⟨0, by decide⟩ ⟨1, by decide⟩ 16#32 rfl _ hwA_0 _ (k1_off9_form ⟨0, by decide⟩ _ _) _ _
      have aA1_2 : pair0_region.sl.v1719_6 d L tab k r g1 g2 hR hin = AccMath.accVec (rowF fl tab (wL L).val (2 * t1.val) (2 * k.val)) (offF fl (wL L).val (2 * t1.val) (2 * k.val)) 1 2 := by
        unfold pair0_region.sl.v1719_6; rw [aA1_1]
        exact acc_step d L fl tab (wL L).val (2 * t1.val) (2 * k.val) 0 _ hRA ⟨1, by decide⟩ ⟨1, by decide⟩ 16#32 rfl _ hwA_1 _ (k1_off10_form ⟨0, by decide⟩ _ _) _ _
      have aA1_3 : pair0_region.sl.v1755_6 d L tab k r g1 g2 hR hin = AccMath.accVec (rowF fl tab (wL L).val (2 * t1.val) (2 * k.val)) (offF fl (wL L).val (2 * t1.val) (2 * k.val)) 1 3 := by
        unfold pair0_region.sl.v1755_6; rw [aA1_2]
        exact acc_step d L fl tab (wL L).val (2 * t1.val) (2 * k.val) 0 _ hRA ⟨2, by decide⟩ ⟨1, by decide⟩ 16#32 rfl _ hwA_2 _ (k1_off11_form ⟨0, by decide⟩ _ _) _ _
      have aA1_4 : pair0_region.sl.v1791_6 d L tab k r g1 g2 hR hin = AccMath.accVec (rowF fl tab (wL L).val (2 * t1.val) (2 * k.val)) (offF fl (wL L).val (2 * t1.val) (2 * k.val)) 1 4 := by
        unfold pair0_region.sl.v1791_6; rw [aA1_3]
        exact acc_step d L fl tab (wL L).val (2 * t1.val) (2 * k.val) 0 _ hRA ⟨3, by decide⟩ ⟨1, by decide⟩ 16#32 rfl _ hwA_3 _ (k1_off12_form ⟨0, by decide⟩ _ _) _ _
      have aA1_5 : pair0_region.sl.v1827_6 d L tab k r g1 g2 hR hin = AccMath.accVec (rowF fl tab (wL L).val (2 * t1.val) (2 * k.val)) (offF fl (wL L).val (2 * t1.val) (2 * k.val)) 1 5 := by
        unfold pair0_region.sl.v1827_6; rw [aA1_4]
        exact acc_step d L fl tab (wL L).val (2 * t1.val) (2 * k.val) 0 _ hRA ⟨4, by decide⟩ ⟨1, by decide⟩ 16#32 rfl _ hwA_4 _ (k1_off13_form ⟨0, by decide⟩ _ _) _ _
      have aA1_6 : pair0_region.sl.v1863_6 d L tab k r g1 g2 hR hin = AccMath.accVec (rowF fl tab (wL L).val (2 * t1.val) (2 * k.val)) (offF fl (wL L).val (2 * t1.val) (2 * k.val)) 1 6 := by
        unfold pair0_region.sl.v1863_6; rw [aA1_5]
        exact acc_step d L fl tab (wL L).val (2 * t1.val) (2 * k.val) 0 _ hRA ⟨5, by decide⟩ ⟨1, by decide⟩ 16#32 rfl _ hwA_5 _ (k1_off14_form ⟨0, by decide⟩ _ _) _ _
      have aA1_7 : pair0_region.sl.v1899_6 d L tab k r g1 g2 hR hin = AccMath.accVec (rowF fl tab (wL L).val (2 * t1.val) (2 * k.val)) (offF fl (wL L).val (2 * t1.val) (2 * k.val)) 1 7 := by
        unfold pair0_region.sl.v1899_6; rw [aA1_6]
        exact acc_step d L fl tab (wL L).val (2 * t1.val) (2 * k.val) 0 _ hRA ⟨6, by decide⟩ ⟨1, by decide⟩ 16#32 rfl _ hwA_6 _ (k1_off15_form ⟨0, by decide⟩ _ _) _ _
      have aA1_8 : pair0_region.sl.v1935_6 d L tab k r g1 g2 hR hin = AccMath.accVec (rowF fl tab (wL L).val (2 * t1.val) (2 * k.val)) (offF fl (wL L).val (2 * t1.val) (2 * k.val)) 1 8 := by
        unfold pair0_region.sl.v1935_6; rw [aA1_7]
        exact acc_step d L fl tab (wL L).val (2 * t1.val) (2 * k.val) 0 _ hRA ⟨7, by decide⟩ ⟨1, by decide⟩ 16#32 rfl _ hwA_7 _ (k1_off16_form ⟨0, by decide⟩ _ _) _ _
      have aA1_9 : pair0_region.sl.v1971_6 d L tab k r g1 g2 hR hin = AccMath.accVec (rowF fl tab (wL L).val (2 * t1.val) (2 * k.val)) (offF fl (wL L).val (2 * t1.val) (2 * k.val)) 1 9 := by
        unfold pair0_region.sl.v1971_6; rw [aA1_8]
        exact acc_step d L fl tab (wL L).val (2 * t1.val) (2 * k.val) 0 _ hRA ⟨8, by decide⟩ ⟨1, by decide⟩ 16#32 rfl _ hwA_8 _ (k1_off17_form ⟨0, by decide⟩ _ _) _ _
      have aA1_10 : pair0_region.sl.v2007_6 d L tab k r g1 g2 hR hin = AccMath.accVec (rowF fl tab (wL L).val (2 * t1.val) (2 * k.val)) (offF fl (wL L).val (2 * t1.val) (2 * k.val)) 1 10 := by
        unfold pair0_region.sl.v2007_6; rw [aA1_9]
        exact acc_step d L fl tab (wL L).val (2 * t1.val) (2 * k.val) 0 _ hRA ⟨9, by decide⟩ ⟨1, by decide⟩ 16#32 rfl _ hwA_9 _ (k1_off18_form ⟨0, by decide⟩ _ _) _ _
      have aA1_11 : pair0_region.sl.v2043_6 d L tab k r g1 g2 hR hin = AccMath.accVec (rowF fl tab (wL L).val (2 * t1.val) (2 * k.val)) (offF fl (wL L).val (2 * t1.val) (2 * k.val)) 1 11 := by
        unfold pair0_region.sl.v2043_6; rw [aA1_10]
        exact acc_step d L fl tab (wL L).val (2 * t1.val) (2 * k.val) 0 _ hRA ⟨10, by decide⟩ ⟨1, by decide⟩ 16#32 rfl _ hwA_10 _ (k1_off19_form ⟨0, by decide⟩ _ _) _ _
      have aA1_12 : pair0_region.sl.v2079_6 d L tab k r g1 g2 hR hin = AccMath.accVec (rowF fl tab (wL L).val (2 * t1.val) (2 * k.val)) (offF fl (wL L).val (2 * t1.val) (2 * k.val)) 1 12 := by
        unfold pair0_region.sl.v2079_6; rw [aA1_11]
        exact acc_step d L fl tab (wL L).val (2 * t1.val) (2 * k.val) 0 _ hRA ⟨11, by decide⟩ ⟨1, by decide⟩ 16#32 rfl _ hwA_11 _ (k1_off20_form ⟨0, by decide⟩ _ _) _ _
      have aA1_13 : pair0_region.sl.v2115_6 d L tab k r g1 g2 hR hin = AccMath.accVec (rowF fl tab (wL L).val (2 * t1.val) (2 * k.val)) (offF fl (wL L).val (2 * t1.val) (2 * k.val)) 1 13 := by
        unfold pair0_region.sl.v2115_6; rw [aA1_12]
        exact acc_step d L fl tab (wL L).val (2 * t1.val) (2 * k.val) 0 _ hRA ⟨12, by decide⟩ ⟨1, by decide⟩ 16#32 rfl _ hwA_12 _ (k1_off21_form ⟨0, by decide⟩ _ _) _ _
      have aA1_14 : pair0_region.sl.v2151_6 d L tab k r g1 g2 hR hin = AccMath.accVec (rowF fl tab (wL L).val (2 * t1.val) (2 * k.val)) (offF fl (wL L).val (2 * t1.val) (2 * k.val)) 1 14 := by
        unfold pair0_region.sl.v2151_6; rw [aA1_13]
        exact acc_step d L fl tab (wL L).val (2 * t1.val) (2 * k.val) 0 _ hRA ⟨13, by decide⟩ ⟨1, by decide⟩ 16#32 rfl _ hwA_13 _ (k1_off22_form ⟨0, by decide⟩ _ _) _ _
      have aA1_15 : pair0_region.sl.v2187_6 d L tab k r g1 g2 hR hin = AccMath.accVec (rowF fl tab (wL L).val (2 * t1.val) (2 * k.val)) (offF fl (wL L).val (2 * t1.val) (2 * k.val)) 1 15 := by
        unfold pair0_region.sl.v2187_6; rw [aA1_14]
        exact acc_step d L fl tab (wL L).val (2 * t1.val) (2 * k.val) 0 _ hRA ⟨14, by decide⟩ ⟨1, by decide⟩ 16#32 rfl _ hwA_14 _ (k1_off23_form ⟨0, by decide⟩ _ _) _ _
      have aA1_16 : pair0_region.sl.v2223_6 d L tab k r g1 g2 hR hin = AccMath.accVec (rowF fl tab (wL L).val (2 * t1.val) (2 * k.val)) (offF fl (wL L).val (2 * t1.val) (2 * k.val)) 1 16 := by
        unfold pair0_region.sl.v2223_6; rw [aA1_15]
        exact acc_step d L fl tab (wL L).val (2 * t1.val) (2 * k.val) 0 _ hRA ⟨15, by decide⟩ ⟨1, by decide⟩ 16#32 rfl _ hwA_15 _ (k1_off24_form ⟨0, by decide⟩ _ _) _ _
      have aA1_17 : pair0_region.sl.v1683_7 d L tab k r g1 g2 hR hin = AccMath.accVec (rowF fl tab (wL L).val (2 * t1.val) (2 * k.val)) (offF fl (wL L).val (2 * t1.val) (2 * k.val)) 1 17 := by
        unfold pair0_region.sl.v1683_7; rw [aA1_16]
        exact acc_step d L fl tab (wL L).val (2 * t1.val) (2 * k.val) 0 _ hRA ⟨16, by decide⟩ ⟨1, by decide⟩ 16#32 rfl _ hwA_16 _ (k1_off9_form ⟨1, by decide⟩ _ _) _ _
      have aA1_18 : pair0_region.sl.v1719_7 d L tab k r g1 g2 hR hin = AccMath.accVec (rowF fl tab (wL L).val (2 * t1.val) (2 * k.val)) (offF fl (wL L).val (2 * t1.val) (2 * k.val)) 1 18 := by
        unfold pair0_region.sl.v1719_7; rw [aA1_17]
        exact acc_step d L fl tab (wL L).val (2 * t1.val) (2 * k.val) 0 _ hRA ⟨17, by decide⟩ ⟨1, by decide⟩ 16#32 rfl _ hwA_17 _ (k1_off10_form ⟨1, by decide⟩ _ _) _ _
      have aA1_19 : pair0_region.sl.v1755_7 d L tab k r g1 g2 hR hin = AccMath.accVec (rowF fl tab (wL L).val (2 * t1.val) (2 * k.val)) (offF fl (wL L).val (2 * t1.val) (2 * k.val)) 1 19 := by
        unfold pair0_region.sl.v1755_7; rw [aA1_18]
        exact acc_step d L fl tab (wL L).val (2 * t1.val) (2 * k.val) 0 _ hRA ⟨18, by decide⟩ ⟨1, by decide⟩ 16#32 rfl _ hwA_18 _ (k1_off11_form ⟨1, by decide⟩ _ _) _ _
      have aA1_20 : pair0_region.sl.v1791_7 d L tab k r g1 g2 hR hin = AccMath.accVec (rowF fl tab (wL L).val (2 * t1.val) (2 * k.val)) (offF fl (wL L).val (2 * t1.val) (2 * k.val)) 1 20 := by
        unfold pair0_region.sl.v1791_7; rw [aA1_19]
        exact acc_step d L fl tab (wL L).val (2 * t1.val) (2 * k.val) 0 _ hRA ⟨19, by decide⟩ ⟨1, by decide⟩ 16#32 rfl _ hwA_19 _ (k1_off12_form ⟨1, by decide⟩ _ _) _ _
      have aA1_21 : pair0_region.sl.v1827_7 d L tab k r g1 g2 hR hin = AccMath.accVec (rowF fl tab (wL L).val (2 * t1.val) (2 * k.val)) (offF fl (wL L).val (2 * t1.val) (2 * k.val)) 1 21 := by
        unfold pair0_region.sl.v1827_7; rw [aA1_20]
        exact acc_step d L fl tab (wL L).val (2 * t1.val) (2 * k.val) 0 _ hRA ⟨20, by decide⟩ ⟨1, by decide⟩ 16#32 rfl _ hwA_20 _ (k1_off13_form ⟨1, by decide⟩ _ _) _ _
      have aA1_22 : pair0_region.sl.v1863_7 d L tab k r g1 g2 hR hin = AccMath.accVec (rowF fl tab (wL L).val (2 * t1.val) (2 * k.val)) (offF fl (wL L).val (2 * t1.val) (2 * k.val)) 1 22 := by
        unfold pair0_region.sl.v1863_7; rw [aA1_21]
        exact acc_step d L fl tab (wL L).val (2 * t1.val) (2 * k.val) 0 _ hRA ⟨21, by decide⟩ ⟨1, by decide⟩ 16#32 rfl _ hwA_21 _ (k1_off14_form ⟨1, by decide⟩ _ _) _ _
      have aA1_23 : pair0_region.sl.v1899_7 d L tab k r g1 g2 hR hin = AccMath.accVec (rowF fl tab (wL L).val (2 * t1.val) (2 * k.val)) (offF fl (wL L).val (2 * t1.val) (2 * k.val)) 1 23 := by
        unfold pair0_region.sl.v1899_7; rw [aA1_22]
        exact acc_step d L fl tab (wL L).val (2 * t1.val) (2 * k.val) 0 _ hRA ⟨22, by decide⟩ ⟨1, by decide⟩ 16#32 rfl _ hwA_22 _ (k1_off15_form ⟨1, by decide⟩ _ _) _ _
      have aA1_24 : pair0_region.sl.v1935_7 d L tab k r g1 g2 hR hin = AccMath.accVec (rowF fl tab (wL L).val (2 * t1.val) (2 * k.val)) (offF fl (wL L).val (2 * t1.val) (2 * k.val)) 1 24 := by
        unfold pair0_region.sl.v1935_7; rw [aA1_23]
        exact acc_step d L fl tab (wL L).val (2 * t1.val) (2 * k.val) 0 _ hRA ⟨23, by decide⟩ ⟨1, by decide⟩ 16#32 rfl _ hwA_23 _ (k1_off16_form ⟨1, by decide⟩ _ _) _ _
      have aA1_25 : pair0_region.sl.v1971_7 d L tab k r g1 g2 hR hin = AccMath.accVec (rowF fl tab (wL L).val (2 * t1.val) (2 * k.val)) (offF fl (wL L).val (2 * t1.val) (2 * k.val)) 1 25 := by
        unfold pair0_region.sl.v1971_7; rw [aA1_24]
        exact acc_step d L fl tab (wL L).val (2 * t1.val) (2 * k.val) 0 _ hRA ⟨24, by decide⟩ ⟨1, by decide⟩ 16#32 rfl _ hwA_24 _ (k1_off17_form ⟨1, by decide⟩ _ _) _ _
      have aA1_26 : pair0_region.sl.v2007_7 d L tab k r g1 g2 hR hin = AccMath.accVec (rowF fl tab (wL L).val (2 * t1.val) (2 * k.val)) (offF fl (wL L).val (2 * t1.val) (2 * k.val)) 1 26 := by
        unfold pair0_region.sl.v2007_7; rw [aA1_25]
        exact acc_step d L fl tab (wL L).val (2 * t1.val) (2 * k.val) 0 _ hRA ⟨25, by decide⟩ ⟨1, by decide⟩ 16#32 rfl _ hwA_25 _ (k1_off18_form ⟨1, by decide⟩ _ _) _ _
      have aA1_27 : pair0_region.sl.v2043_7 d L tab k r g1 g2 hR hin = AccMath.accVec (rowF fl tab (wL L).val (2 * t1.val) (2 * k.val)) (offF fl (wL L).val (2 * t1.val) (2 * k.val)) 1 27 := by
        unfold pair0_region.sl.v2043_7; rw [aA1_26]
        exact acc_step d L fl tab (wL L).val (2 * t1.val) (2 * k.val) 0 _ hRA ⟨26, by decide⟩ ⟨1, by decide⟩ 16#32 rfl _ hwA_26 _ (k1_off19_form ⟨1, by decide⟩ _ _) _ _
      have aA1_28 : pair0_region.sl.v2079_7 d L tab k r g1 g2 hR hin = AccMath.accVec (rowF fl tab (wL L).val (2 * t1.val) (2 * k.val)) (offF fl (wL L).val (2 * t1.val) (2 * k.val)) 1 28 := by
        unfold pair0_region.sl.v2079_7; rw [aA1_27]
        exact acc_step d L fl tab (wL L).val (2 * t1.val) (2 * k.val) 0 _ hRA ⟨27, by decide⟩ ⟨1, by decide⟩ 16#32 rfl _ hwA_27 _ (k1_off20_form ⟨1, by decide⟩ _ _) _ _
      have aA1_29 : pair0_region.sl.v2115_7 d L tab k r g1 g2 hR hin = AccMath.accVec (rowF fl tab (wL L).val (2 * t1.val) (2 * k.val)) (offF fl (wL L).val (2 * t1.val) (2 * k.val)) 1 29 := by
        unfold pair0_region.sl.v2115_7; rw [aA1_28]
        exact acc_step d L fl tab (wL L).val (2 * t1.val) (2 * k.val) 0 _ hRA ⟨28, by decide⟩ ⟨1, by decide⟩ 16#32 rfl _ hwA_28 _ (k1_off21_form ⟨1, by decide⟩ _ _) _ _
      have aA1_30 : pair0_region.sl.v2151_7 d L tab k r g1 g2 hR hin = AccMath.accVec (rowF fl tab (wL L).val (2 * t1.val) (2 * k.val)) (offF fl (wL L).val (2 * t1.val) (2 * k.val)) 1 30 := by
        unfold pair0_region.sl.v2151_7; rw [aA1_29]
        exact acc_step d L fl tab (wL L).val (2 * t1.val) (2 * k.val) 0 _ hRA ⟨29, by decide⟩ ⟨1, by decide⟩ 16#32 rfl _ hwA_29 _ (k1_off22_form ⟨1, by decide⟩ _ _) _ _
      have aA1_31 : pair0_region.sl.v2187_7 d L tab k r g1 g2 hR hin = AccMath.accVec (rowF fl tab (wL L).val (2 * t1.val) (2 * k.val)) (offF fl (wL L).val (2 * t1.val) (2 * k.val)) 1 31 := by
        unfold pair0_region.sl.v2187_7; rw [aA1_30]
        exact acc_step d L fl tab (wL L).val (2 * t1.val) (2 * k.val) 0 _ hRA ⟨30, by decide⟩ ⟨1, by decide⟩ 16#32 rfl _ hwA_30 _ (k1_off23_form ⟨1, by decide⟩ _ _) _ _
      have aA1_32 : pair0_region.sl.v2223_7 d L tab k r g1 g2 hR hin = AccMath.accVec (rowF fl tab (wL L).val (2 * t1.val) (2 * k.val)) (offF fl (wL L).val (2 * t1.val) (2 * k.val)) 1 32 := by
        unfold pair0_region.sl.v2223_7; rw [aA1_31]
        exact acc_step d L fl tab (wL L).val (2 * t1.val) (2 * k.val) 0 _ hRA ⟨31, by decide⟩ ⟨1, by decide⟩ 16#32 rfl _ hwA_31 _ (k1_off24_form ⟨1, by decide⟩ _ _) _ _
      have aA1_33 : pair0_region.sl.v1683_8 d L tab k r g1 g2 hR hin = AccMath.accVec (rowF fl tab (wL L).val (2 * t1.val) (2 * k.val)) (offF fl (wL L).val (2 * t1.val) (2 * k.val)) 1 33 := by
        unfold pair0_region.sl.v1683_8; rw [aA1_32]
        exact acc_step d L fl tab (wL L).val (2 * t1.val) (2 * k.val) 0 _ hRA ⟨32, by decide⟩ ⟨1, by decide⟩ 16#32 rfl _ hwA_32 _ (k1_off9_form ⟨2, by decide⟩ _ _) _ _
      have aA1_34 : pair0_region.sl.v1719_8 d L tab k r g1 g2 hR hin = AccMath.accVec (rowF fl tab (wL L).val (2 * t1.val) (2 * k.val)) (offF fl (wL L).val (2 * t1.val) (2 * k.val)) 1 34 := by
        unfold pair0_region.sl.v1719_8; rw [aA1_33]
        exact acc_step d L fl tab (wL L).val (2 * t1.val) (2 * k.val) 0 _ hRA ⟨33, by decide⟩ ⟨1, by decide⟩ 16#32 rfl _ hwA_33 _ (k1_off10_form ⟨2, by decide⟩ _ _) _ _
      have aA1_35 : pair0_region.sl.v1755_8 d L tab k r g1 g2 hR hin = AccMath.accVec (rowF fl tab (wL L).val (2 * t1.val) (2 * k.val)) (offF fl (wL L).val (2 * t1.val) (2 * k.val)) 1 35 := by
        unfold pair0_region.sl.v1755_8; rw [aA1_34]
        exact acc_step d L fl tab (wL L).val (2 * t1.val) (2 * k.val) 0 _ hRA ⟨34, by decide⟩ ⟨1, by decide⟩ 16#32 rfl _ hwA_34 _ (k1_off11_form ⟨2, by decide⟩ _ _) _ _
      have aA1_36 : pair0_region.sl.v1791_8 d L tab k r g1 g2 hR hin = AccMath.accVec (rowF fl tab (wL L).val (2 * t1.val) (2 * k.val)) (offF fl (wL L).val (2 * t1.val) (2 * k.val)) 1 36 := by
        unfold pair0_region.sl.v1791_8; rw [aA1_35]
        exact acc_step d L fl tab (wL L).val (2 * t1.val) (2 * k.val) 0 _ hRA ⟨35, by decide⟩ ⟨1, by decide⟩ 16#32 rfl _ hwA_35 _ (k1_off12_form ⟨2, by decide⟩ _ _) _ _
      have aA1_37 : pair0_region.sl.v1827_8 d L tab k r g1 g2 hR hin = AccMath.accVec (rowF fl tab (wL L).val (2 * t1.val) (2 * k.val)) (offF fl (wL L).val (2 * t1.val) (2 * k.val)) 1 37 := by
        unfold pair0_region.sl.v1827_8; rw [aA1_36]
        exact acc_step d L fl tab (wL L).val (2 * t1.val) (2 * k.val) 0 _ hRA ⟨36, by decide⟩ ⟨1, by decide⟩ 16#32 rfl _ hwA_36 _ (k1_off13_form ⟨2, by decide⟩ _ _) _ _
      have aA1_38 : pair0_region.sl.v1863_8 d L tab k r g1 g2 hR hin = AccMath.accVec (rowF fl tab (wL L).val (2 * t1.val) (2 * k.val)) (offF fl (wL L).val (2 * t1.val) (2 * k.val)) 1 38 := by
        unfold pair0_region.sl.v1863_8; rw [aA1_37]
        exact acc_step d L fl tab (wL L).val (2 * t1.val) (2 * k.val) 0 _ hRA ⟨37, by decide⟩ ⟨1, by decide⟩ 16#32 rfl _ hwA_37 _ (k1_off14_form ⟨2, by decide⟩ _ _) _ _
      have aA1_39 : pair0_region.sl.v1899_8 d L tab k r g1 g2 hR hin = AccMath.accVec (rowF fl tab (wL L).val (2 * t1.val) (2 * k.val)) (offF fl (wL L).val (2 * t1.val) (2 * k.val)) 1 39 := by
        unfold pair0_region.sl.v1899_8; rw [aA1_38]
        exact acc_step d L fl tab (wL L).val (2 * t1.val) (2 * k.val) 0 _ hRA ⟨38, by decide⟩ ⟨1, by decide⟩ 16#32 rfl _ hwA_38 _ (k1_off15_form ⟨2, by decide⟩ _ _) _ _
      have aA1_40 : pair0_region.sl.v1935_8 d L tab k r g1 g2 hR hin = AccMath.accVec (rowF fl tab (wL L).val (2 * t1.val) (2 * k.val)) (offF fl (wL L).val (2 * t1.val) (2 * k.val)) 1 40 := by
        unfold pair0_region.sl.v1935_8; rw [aA1_39]
        exact acc_step d L fl tab (wL L).val (2 * t1.val) (2 * k.val) 0 _ hRA ⟨39, by decide⟩ ⟨1, by decide⟩ 16#32 rfl _ hwA_39 _ (k1_off16_form ⟨2, by decide⟩ _ _) _ _
      have aA1_41 : pair0_region.sl.v1971_8 d L tab k r g1 g2 hR hin = AccMath.accVec (rowF fl tab (wL L).val (2 * t1.val) (2 * k.val)) (offF fl (wL L).val (2 * t1.val) (2 * k.val)) 1 41 := by
        unfold pair0_region.sl.v1971_8; rw [aA1_40]
        exact acc_step d L fl tab (wL L).val (2 * t1.val) (2 * k.val) 0 _ hRA ⟨40, by decide⟩ ⟨1, by decide⟩ 16#32 rfl _ hwA_40 _ (k1_off17_form ⟨2, by decide⟩ _ _) _ _
      have aA1_42 : pair0_region.sl.v2007_8 d L tab k r g1 g2 hR hin = AccMath.accVec (rowF fl tab (wL L).val (2 * t1.val) (2 * k.val)) (offF fl (wL L).val (2 * t1.val) (2 * k.val)) 1 42 := by
        unfold pair0_region.sl.v2007_8; rw [aA1_41]
        exact acc_step d L fl tab (wL L).val (2 * t1.val) (2 * k.val) 0 _ hRA ⟨41, by decide⟩ ⟨1, by decide⟩ 16#32 rfl _ hwA_41 _ (k1_off18_form ⟨2, by decide⟩ _ _) _ _
      have aA1_43 : pair0_region.sl.v2043_8 d L tab k r g1 g2 hR hin = AccMath.accVec (rowF fl tab (wL L).val (2 * t1.val) (2 * k.val)) (offF fl (wL L).val (2 * t1.val) (2 * k.val)) 1 43 := by
        unfold pair0_region.sl.v2043_8; rw [aA1_42]
        exact acc_step d L fl tab (wL L).val (2 * t1.val) (2 * k.val) 0 _ hRA ⟨42, by decide⟩ ⟨1, by decide⟩ 16#32 rfl _ hwA_42 _ (k1_off19_form ⟨2, by decide⟩ _ _) _ _
      have aA1_44 : pair0_region.sl.v2079_8 d L tab k r g1 g2 hR hin = AccMath.accVec (rowF fl tab (wL L).val (2 * t1.val) (2 * k.val)) (offF fl (wL L).val (2 * t1.val) (2 * k.val)) 1 44 := by
        unfold pair0_region.sl.v2079_8; rw [aA1_43]
        exact acc_step d L fl tab (wL L).val (2 * t1.val) (2 * k.val) 0 _ hRA ⟨43, by decide⟩ ⟨1, by decide⟩ 16#32 rfl _ hwA_43 _ (k1_off20_form ⟨2, by decide⟩ _ _) _ _
      have aA1_45 : pair0_region.sl.v2115_8 d L tab k r g1 g2 hR hin = AccMath.accVec (rowF fl tab (wL L).val (2 * t1.val) (2 * k.val)) (offF fl (wL L).val (2 * t1.val) (2 * k.val)) 1 45 := by
        unfold pair0_region.sl.v2115_8; rw [aA1_44]
        exact acc_step d L fl tab (wL L).val (2 * t1.val) (2 * k.val) 0 _ hRA ⟨44, by decide⟩ ⟨1, by decide⟩ 16#32 rfl _ hwA_44 _ (k1_off21_form ⟨2, by decide⟩ _ _) _ _
      have aA1_46 : pair0_region.sl.v2151_8 d L tab k r g1 g2 hR hin = AccMath.accVec (rowF fl tab (wL L).val (2 * t1.val) (2 * k.val)) (offF fl (wL L).val (2 * t1.val) (2 * k.val)) 1 46 := by
        unfold pair0_region.sl.v2151_8; rw [aA1_45]
        exact acc_step d L fl tab (wL L).val (2 * t1.val) (2 * k.val) 0 _ hRA ⟨45, by decide⟩ ⟨1, by decide⟩ 16#32 rfl _ hwA_45 _ (k1_off22_form ⟨2, by decide⟩ _ _) _ _
      have aA1_47 : pair0_region.sl.v2187_8 d L tab k r g1 g2 hR hin = AccMath.accVec (rowF fl tab (wL L).val (2 * t1.val) (2 * k.val)) (offF fl (wL L).val (2 * t1.val) (2 * k.val)) 1 47 := by
        unfold pair0_region.sl.v2187_8; rw [aA1_46]
        exact acc_step d L fl tab (wL L).val (2 * t1.val) (2 * k.val) 0 _ hRA ⟨46, by decide⟩ ⟨1, by decide⟩ 16#32 rfl _ hwA_46 _ (k1_off23_form ⟨2, by decide⟩ _ _) _ _
      have aA1_48 : pair0_region.sl.v2223_8 d L tab k r g1 g2 hR hin = AccMath.accVec (rowF fl tab (wL L).val (2 * t1.val) (2 * k.val)) (offF fl (wL L).val (2 * t1.val) (2 * k.val)) 1 48 := by
        unfold pair0_region.sl.v2223_8; rw [aA1_47]
        exact acc_step d L fl tab (wL L).val (2 * t1.val) (2 * k.val) 0 _ hRA ⟨47, by decide⟩ ⟨1, by decide⟩ 16#32 rfl _ hwA_47 _ (k1_off24_form ⟨2, by decide⟩ _ _) _ _
      have aA1_49 : pair0_region.sl.v1472_1 d L tab k r g1 g2 hR hin = AccMath.accVec (rowF fl tab (wL L).val (2 * t1.val) (2 * k.val)) (offF fl (wL L).val (2 * t1.val) (2 * k.val)) 1 49 := by
        unfold pair0_region.sl.v1472_1; rw [aA1_48]
        exact acc_step d L fl tab (wL L).val (2 * t1.val) (2 * k.val) 0 _ hRA ⟨48, by decide⟩ ⟨1, by decide⟩ 16#32 rfl _ hwA_48 _ (k1_off26_form _ _) _ _
      have aA1_50 : pair0_region.sl.v1506_1 d L tab k r g1 g2 hR hin = AccMath.accVec (rowF fl tab (wL L).val (2 * t1.val) (2 * k.val)) (offF fl (wL L).val (2 * t1.val) (2 * k.val)) 1 50 := by
        unfold pair0_region.sl.v1506_1; rw [aA1_49]
        exact acc_step d L fl tab (wL L).val (2 * t1.val) (2 * k.val) 0 _ hRA ⟨49, by decide⟩ ⟨1, by decide⟩ 16#32 rfl _ hwA_49 _ (k1_off27_form _ _) _ _
      have hPA1 : ∀ x : S1x1x16.Idx, pair0_region.sl.v1532_1 d L tab k r g1 g2 hR hin x = Spec.bagPartial fl tab (128 * (wL L).val + 16 * (2 * t1.val) + (2 * k.val)) (16 * 1 + (x 2).val) 50 := fun x => by
        unfold pair0_region.sl.v1532_1; rw [aA1_50]; exact payload_ok fl tab (wL L).val (2 * t1.val) (2 * k.val) ⟨1, by decide⟩ _ x
      have aA2_0 : pair0_region.sl.v1445_1 = AccMath.accVec (rowF fl tab (wL L).val (2 * t1.val) (2 * k.val)) (offF fl (wL L).val (2 * t1.val) (2 * k.val)) 2 0 := acc_zero fl tab (wL L).val (2 * t1.val) (2 * k.val) 2
      have aA2_1 : pair0_region.sl.v1691_6 d L tab k r g1 g2 hR hin = AccMath.accVec (rowF fl tab (wL L).val (2 * t1.val) (2 * k.val)) (offF fl (wL L).val (2 * t1.val) (2 * k.val)) 2 1 := by
        unfold pair0_region.sl.v1691_6; rw [aA2_0]
        exact acc_step d L fl tab (wL L).val (2 * t1.val) (2 * k.val) 0 _ hRA ⟨0, by decide⟩ ⟨2, by decide⟩ 32#32 rfl _ hwA_0 _ (k1_off9_form ⟨0, by decide⟩ _ _) _ _
      have aA2_2 : pair0_region.sl.v1727_6 d L tab k r g1 g2 hR hin = AccMath.accVec (rowF fl tab (wL L).val (2 * t1.val) (2 * k.val)) (offF fl (wL L).val (2 * t1.val) (2 * k.val)) 2 2 := by
        unfold pair0_region.sl.v1727_6; rw [aA2_1]
        exact acc_step d L fl tab (wL L).val (2 * t1.val) (2 * k.val) 0 _ hRA ⟨1, by decide⟩ ⟨2, by decide⟩ 32#32 rfl _ hwA_1 _ (k1_off10_form ⟨0, by decide⟩ _ _) _ _
      have aA2_3 : pair0_region.sl.v1763_6 d L tab k r g1 g2 hR hin = AccMath.accVec (rowF fl tab (wL L).val (2 * t1.val) (2 * k.val)) (offF fl (wL L).val (2 * t1.val) (2 * k.val)) 2 3 := by
        unfold pair0_region.sl.v1763_6; rw [aA2_2]
        exact acc_step d L fl tab (wL L).val (2 * t1.val) (2 * k.val) 0 _ hRA ⟨2, by decide⟩ ⟨2, by decide⟩ 32#32 rfl _ hwA_2 _ (k1_off11_form ⟨0, by decide⟩ _ _) _ _
      have aA2_4 : pair0_region.sl.v1799_6 d L tab k r g1 g2 hR hin = AccMath.accVec (rowF fl tab (wL L).val (2 * t1.val) (2 * k.val)) (offF fl (wL L).val (2 * t1.val) (2 * k.val)) 2 4 := by
        unfold pair0_region.sl.v1799_6; rw [aA2_3]
        exact acc_step d L fl tab (wL L).val (2 * t1.val) (2 * k.val) 0 _ hRA ⟨3, by decide⟩ ⟨2, by decide⟩ 32#32 rfl _ hwA_3 _ (k1_off12_form ⟨0, by decide⟩ _ _) _ _
      have aA2_5 : pair0_region.sl.v1835_6 d L tab k r g1 g2 hR hin = AccMath.accVec (rowF fl tab (wL L).val (2 * t1.val) (2 * k.val)) (offF fl (wL L).val (2 * t1.val) (2 * k.val)) 2 5 := by
        unfold pair0_region.sl.v1835_6; rw [aA2_4]
        exact acc_step d L fl tab (wL L).val (2 * t1.val) (2 * k.val) 0 _ hRA ⟨4, by decide⟩ ⟨2, by decide⟩ 32#32 rfl _ hwA_4 _ (k1_off13_form ⟨0, by decide⟩ _ _) _ _
      have aA2_6 : pair0_region.sl.v1871_6 d L tab k r g1 g2 hR hin = AccMath.accVec (rowF fl tab (wL L).val (2 * t1.val) (2 * k.val)) (offF fl (wL L).val (2 * t1.val) (2 * k.val)) 2 6 := by
        unfold pair0_region.sl.v1871_6; rw [aA2_5]
        exact acc_step d L fl tab (wL L).val (2 * t1.val) (2 * k.val) 0 _ hRA ⟨5, by decide⟩ ⟨2, by decide⟩ 32#32 rfl _ hwA_5 _ (k1_off14_form ⟨0, by decide⟩ _ _) _ _
      have aA2_7 : pair0_region.sl.v1907_6 d L tab k r g1 g2 hR hin = AccMath.accVec (rowF fl tab (wL L).val (2 * t1.val) (2 * k.val)) (offF fl (wL L).val (2 * t1.val) (2 * k.val)) 2 7 := by
        unfold pair0_region.sl.v1907_6; rw [aA2_6]
        exact acc_step d L fl tab (wL L).val (2 * t1.val) (2 * k.val) 0 _ hRA ⟨6, by decide⟩ ⟨2, by decide⟩ 32#32 rfl _ hwA_6 _ (k1_off15_form ⟨0, by decide⟩ _ _) _ _
      have aA2_8 : pair0_region.sl.v1943_6 d L tab k r g1 g2 hR hin = AccMath.accVec (rowF fl tab (wL L).val (2 * t1.val) (2 * k.val)) (offF fl (wL L).val (2 * t1.val) (2 * k.val)) 2 8 := by
        unfold pair0_region.sl.v1943_6; rw [aA2_7]
        exact acc_step d L fl tab (wL L).val (2 * t1.val) (2 * k.val) 0 _ hRA ⟨7, by decide⟩ ⟨2, by decide⟩ 32#32 rfl _ hwA_7 _ (k1_off16_form ⟨0, by decide⟩ _ _) _ _
      have aA2_9 : pair0_region.sl.v1979_6 d L tab k r g1 g2 hR hin = AccMath.accVec (rowF fl tab (wL L).val (2 * t1.val) (2 * k.val)) (offF fl (wL L).val (2 * t1.val) (2 * k.val)) 2 9 := by
        unfold pair0_region.sl.v1979_6; rw [aA2_8]
        exact acc_step d L fl tab (wL L).val (2 * t1.val) (2 * k.val) 0 _ hRA ⟨8, by decide⟩ ⟨2, by decide⟩ 32#32 rfl _ hwA_8 _ (k1_off17_form ⟨0, by decide⟩ _ _) _ _
      have aA2_10 : pair0_region.sl.v2015_6 d L tab k r g1 g2 hR hin = AccMath.accVec (rowF fl tab (wL L).val (2 * t1.val) (2 * k.val)) (offF fl (wL L).val (2 * t1.val) (2 * k.val)) 2 10 := by
        unfold pair0_region.sl.v2015_6; rw [aA2_9]
        exact acc_step d L fl tab (wL L).val (2 * t1.val) (2 * k.val) 0 _ hRA ⟨9, by decide⟩ ⟨2, by decide⟩ 32#32 rfl _ hwA_9 _ (k1_off18_form ⟨0, by decide⟩ _ _) _ _
      have aA2_11 : pair0_region.sl.v2051_6 d L tab k r g1 g2 hR hin = AccMath.accVec (rowF fl tab (wL L).val (2 * t1.val) (2 * k.val)) (offF fl (wL L).val (2 * t1.val) (2 * k.val)) 2 11 := by
        unfold pair0_region.sl.v2051_6; rw [aA2_10]
        exact acc_step d L fl tab (wL L).val (2 * t1.val) (2 * k.val) 0 _ hRA ⟨10, by decide⟩ ⟨2, by decide⟩ 32#32 rfl _ hwA_10 _ (k1_off19_form ⟨0, by decide⟩ _ _) _ _
      have aA2_12 : pair0_region.sl.v2087_6 d L tab k r g1 g2 hR hin = AccMath.accVec (rowF fl tab (wL L).val (2 * t1.val) (2 * k.val)) (offF fl (wL L).val (2 * t1.val) (2 * k.val)) 2 12 := by
        unfold pair0_region.sl.v2087_6; rw [aA2_11]
        exact acc_step d L fl tab (wL L).val (2 * t1.val) (2 * k.val) 0 _ hRA ⟨11, by decide⟩ ⟨2, by decide⟩ 32#32 rfl _ hwA_11 _ (k1_off20_form ⟨0, by decide⟩ _ _) _ _
      have aA2_13 : pair0_region.sl.v2123_6 d L tab k r g1 g2 hR hin = AccMath.accVec (rowF fl tab (wL L).val (2 * t1.val) (2 * k.val)) (offF fl (wL L).val (2 * t1.val) (2 * k.val)) 2 13 := by
        unfold pair0_region.sl.v2123_6; rw [aA2_12]
        exact acc_step d L fl tab (wL L).val (2 * t1.val) (2 * k.val) 0 _ hRA ⟨12, by decide⟩ ⟨2, by decide⟩ 32#32 rfl _ hwA_12 _ (k1_off21_form ⟨0, by decide⟩ _ _) _ _
      have aA2_14 : pair0_region.sl.v2159_6 d L tab k r g1 g2 hR hin = AccMath.accVec (rowF fl tab (wL L).val (2 * t1.val) (2 * k.val)) (offF fl (wL L).val (2 * t1.val) (2 * k.val)) 2 14 := by
        unfold pair0_region.sl.v2159_6; rw [aA2_13]
        exact acc_step d L fl tab (wL L).val (2 * t1.val) (2 * k.val) 0 _ hRA ⟨13, by decide⟩ ⟨2, by decide⟩ 32#32 rfl _ hwA_13 _ (k1_off22_form ⟨0, by decide⟩ _ _) _ _
      have aA2_15 : pair0_region.sl.v2195_6 d L tab k r g1 g2 hR hin = AccMath.accVec (rowF fl tab (wL L).val (2 * t1.val) (2 * k.val)) (offF fl (wL L).val (2 * t1.val) (2 * k.val)) 2 15 := by
        unfold pair0_region.sl.v2195_6; rw [aA2_14]
        exact acc_step d L fl tab (wL L).val (2 * t1.val) (2 * k.val) 0 _ hRA ⟨14, by decide⟩ ⟨2, by decide⟩ 32#32 rfl _ hwA_14 _ (k1_off23_form ⟨0, by decide⟩ _ _) _ _
      have aA2_16 : pair0_region.sl.v2231_6 d L tab k r g1 g2 hR hin = AccMath.accVec (rowF fl tab (wL L).val (2 * t1.val) (2 * k.val)) (offF fl (wL L).val (2 * t1.val) (2 * k.val)) 2 16 := by
        unfold pair0_region.sl.v2231_6; rw [aA2_15]
        exact acc_step d L fl tab (wL L).val (2 * t1.val) (2 * k.val) 0 _ hRA ⟨15, by decide⟩ ⟨2, by decide⟩ 32#32 rfl _ hwA_15 _ (k1_off24_form ⟨0, by decide⟩ _ _) _ _
      have aA2_17 : pair0_region.sl.v1691_7 d L tab k r g1 g2 hR hin = AccMath.accVec (rowF fl tab (wL L).val (2 * t1.val) (2 * k.val)) (offF fl (wL L).val (2 * t1.val) (2 * k.val)) 2 17 := by
        unfold pair0_region.sl.v1691_7; rw [aA2_16]
        exact acc_step d L fl tab (wL L).val (2 * t1.val) (2 * k.val) 0 _ hRA ⟨16, by decide⟩ ⟨2, by decide⟩ 32#32 rfl _ hwA_16 _ (k1_off9_form ⟨1, by decide⟩ _ _) _ _
      have aA2_18 : pair0_region.sl.v1727_7 d L tab k r g1 g2 hR hin = AccMath.accVec (rowF fl tab (wL L).val (2 * t1.val) (2 * k.val)) (offF fl (wL L).val (2 * t1.val) (2 * k.val)) 2 18 := by
        unfold pair0_region.sl.v1727_7; rw [aA2_17]
        exact acc_step d L fl tab (wL L).val (2 * t1.val) (2 * k.val) 0 _ hRA ⟨17, by decide⟩ ⟨2, by decide⟩ 32#32 rfl _ hwA_17 _ (k1_off10_form ⟨1, by decide⟩ _ _) _ _
      have aA2_19 : pair0_region.sl.v1763_7 d L tab k r g1 g2 hR hin = AccMath.accVec (rowF fl tab (wL L).val (2 * t1.val) (2 * k.val)) (offF fl (wL L).val (2 * t1.val) (2 * k.val)) 2 19 := by
        unfold pair0_region.sl.v1763_7; rw [aA2_18]
        exact acc_step d L fl tab (wL L).val (2 * t1.val) (2 * k.val) 0 _ hRA ⟨18, by decide⟩ ⟨2, by decide⟩ 32#32 rfl _ hwA_18 _ (k1_off11_form ⟨1, by decide⟩ _ _) _ _
      have aA2_20 : pair0_region.sl.v1799_7 d L tab k r g1 g2 hR hin = AccMath.accVec (rowF fl tab (wL L).val (2 * t1.val) (2 * k.val)) (offF fl (wL L).val (2 * t1.val) (2 * k.val)) 2 20 := by
        unfold pair0_region.sl.v1799_7; rw [aA2_19]
        exact acc_step d L fl tab (wL L).val (2 * t1.val) (2 * k.val) 0 _ hRA ⟨19, by decide⟩ ⟨2, by decide⟩ 32#32 rfl _ hwA_19 _ (k1_off12_form ⟨1, by decide⟩ _ _) _ _
      have aA2_21 : pair0_region.sl.v1835_7 d L tab k r g1 g2 hR hin = AccMath.accVec (rowF fl tab (wL L).val (2 * t1.val) (2 * k.val)) (offF fl (wL L).val (2 * t1.val) (2 * k.val)) 2 21 := by
        unfold pair0_region.sl.v1835_7; rw [aA2_20]
        exact acc_step d L fl tab (wL L).val (2 * t1.val) (2 * k.val) 0 _ hRA ⟨20, by decide⟩ ⟨2, by decide⟩ 32#32 rfl _ hwA_20 _ (k1_off13_form ⟨1, by decide⟩ _ _) _ _
      have aA2_22 : pair0_region.sl.v1871_7 d L tab k r g1 g2 hR hin = AccMath.accVec (rowF fl tab (wL L).val (2 * t1.val) (2 * k.val)) (offF fl (wL L).val (2 * t1.val) (2 * k.val)) 2 22 := by
        unfold pair0_region.sl.v1871_7; rw [aA2_21]
        exact acc_step d L fl tab (wL L).val (2 * t1.val) (2 * k.val) 0 _ hRA ⟨21, by decide⟩ ⟨2, by decide⟩ 32#32 rfl _ hwA_21 _ (k1_off14_form ⟨1, by decide⟩ _ _) _ _
      have aA2_23 : pair0_region.sl.v1907_7 d L tab k r g1 g2 hR hin = AccMath.accVec (rowF fl tab (wL L).val (2 * t1.val) (2 * k.val)) (offF fl (wL L).val (2 * t1.val) (2 * k.val)) 2 23 := by
        unfold pair0_region.sl.v1907_7; rw [aA2_22]
        exact acc_step d L fl tab (wL L).val (2 * t1.val) (2 * k.val) 0 _ hRA ⟨22, by decide⟩ ⟨2, by decide⟩ 32#32 rfl _ hwA_22 _ (k1_off15_form ⟨1, by decide⟩ _ _) _ _
      have aA2_24 : pair0_region.sl.v1943_7 d L tab k r g1 g2 hR hin = AccMath.accVec (rowF fl tab (wL L).val (2 * t1.val) (2 * k.val)) (offF fl (wL L).val (2 * t1.val) (2 * k.val)) 2 24 := by
        unfold pair0_region.sl.v1943_7; rw [aA2_23]
        exact acc_step d L fl tab (wL L).val (2 * t1.val) (2 * k.val) 0 _ hRA ⟨23, by decide⟩ ⟨2, by decide⟩ 32#32 rfl _ hwA_23 _ (k1_off16_form ⟨1, by decide⟩ _ _) _ _
      have aA2_25 : pair0_region.sl.v1979_7 d L tab k r g1 g2 hR hin = AccMath.accVec (rowF fl tab (wL L).val (2 * t1.val) (2 * k.val)) (offF fl (wL L).val (2 * t1.val) (2 * k.val)) 2 25 := by
        unfold pair0_region.sl.v1979_7; rw [aA2_24]
        exact acc_step d L fl tab (wL L).val (2 * t1.val) (2 * k.val) 0 _ hRA ⟨24, by decide⟩ ⟨2, by decide⟩ 32#32 rfl _ hwA_24 _ (k1_off17_form ⟨1, by decide⟩ _ _) _ _
      have aA2_26 : pair0_region.sl.v2015_7 d L tab k r g1 g2 hR hin = AccMath.accVec (rowF fl tab (wL L).val (2 * t1.val) (2 * k.val)) (offF fl (wL L).val (2 * t1.val) (2 * k.val)) 2 26 := by
        unfold pair0_region.sl.v2015_7; rw [aA2_25]
        exact acc_step d L fl tab (wL L).val (2 * t1.val) (2 * k.val) 0 _ hRA ⟨25, by decide⟩ ⟨2, by decide⟩ 32#32 rfl _ hwA_25 _ (k1_off18_form ⟨1, by decide⟩ _ _) _ _
      have aA2_27 : pair0_region.sl.v2051_7 d L tab k r g1 g2 hR hin = AccMath.accVec (rowF fl tab (wL L).val (2 * t1.val) (2 * k.val)) (offF fl (wL L).val (2 * t1.val) (2 * k.val)) 2 27 := by
        unfold pair0_region.sl.v2051_7; rw [aA2_26]
        exact acc_step d L fl tab (wL L).val (2 * t1.val) (2 * k.val) 0 _ hRA ⟨26, by decide⟩ ⟨2, by decide⟩ 32#32 rfl _ hwA_26 _ (k1_off19_form ⟨1, by decide⟩ _ _) _ _
      have aA2_28 : pair0_region.sl.v2087_7 d L tab k r g1 g2 hR hin = AccMath.accVec (rowF fl tab (wL L).val (2 * t1.val) (2 * k.val)) (offF fl (wL L).val (2 * t1.val) (2 * k.val)) 2 28 := by
        unfold pair0_region.sl.v2087_7; rw [aA2_27]
        exact acc_step d L fl tab (wL L).val (2 * t1.val) (2 * k.val) 0 _ hRA ⟨27, by decide⟩ ⟨2, by decide⟩ 32#32 rfl _ hwA_27 _ (k1_off20_form ⟨1, by decide⟩ _ _) _ _
      have aA2_29 : pair0_region.sl.v2123_7 d L tab k r g1 g2 hR hin = AccMath.accVec (rowF fl tab (wL L).val (2 * t1.val) (2 * k.val)) (offF fl (wL L).val (2 * t1.val) (2 * k.val)) 2 29 := by
        unfold pair0_region.sl.v2123_7; rw [aA2_28]
        exact acc_step d L fl tab (wL L).val (2 * t1.val) (2 * k.val) 0 _ hRA ⟨28, by decide⟩ ⟨2, by decide⟩ 32#32 rfl _ hwA_28 _ (k1_off21_form ⟨1, by decide⟩ _ _) _ _
      have aA2_30 : pair0_region.sl.v2159_7 d L tab k r g1 g2 hR hin = AccMath.accVec (rowF fl tab (wL L).val (2 * t1.val) (2 * k.val)) (offF fl (wL L).val (2 * t1.val) (2 * k.val)) 2 30 := by
        unfold pair0_region.sl.v2159_7; rw [aA2_29]
        exact acc_step d L fl tab (wL L).val (2 * t1.val) (2 * k.val) 0 _ hRA ⟨29, by decide⟩ ⟨2, by decide⟩ 32#32 rfl _ hwA_29 _ (k1_off22_form ⟨1, by decide⟩ _ _) _ _
      have aA2_31 : pair0_region.sl.v2195_7 d L tab k r g1 g2 hR hin = AccMath.accVec (rowF fl tab (wL L).val (2 * t1.val) (2 * k.val)) (offF fl (wL L).val (2 * t1.val) (2 * k.val)) 2 31 := by
        unfold pair0_region.sl.v2195_7; rw [aA2_30]
        exact acc_step d L fl tab (wL L).val (2 * t1.val) (2 * k.val) 0 _ hRA ⟨30, by decide⟩ ⟨2, by decide⟩ 32#32 rfl _ hwA_30 _ (k1_off23_form ⟨1, by decide⟩ _ _) _ _
      have aA2_32 : pair0_region.sl.v2231_7 d L tab k r g1 g2 hR hin = AccMath.accVec (rowF fl tab (wL L).val (2 * t1.val) (2 * k.val)) (offF fl (wL L).val (2 * t1.val) (2 * k.val)) 2 32 := by
        unfold pair0_region.sl.v2231_7; rw [aA2_31]
        exact acc_step d L fl tab (wL L).val (2 * t1.val) (2 * k.val) 0 _ hRA ⟨31, by decide⟩ ⟨2, by decide⟩ 32#32 rfl _ hwA_31 _ (k1_off24_form ⟨1, by decide⟩ _ _) _ _
      have aA2_33 : pair0_region.sl.v1691_8 d L tab k r g1 g2 hR hin = AccMath.accVec (rowF fl tab (wL L).val (2 * t1.val) (2 * k.val)) (offF fl (wL L).val (2 * t1.val) (2 * k.val)) 2 33 := by
        unfold pair0_region.sl.v1691_8; rw [aA2_32]
        exact acc_step d L fl tab (wL L).val (2 * t1.val) (2 * k.val) 0 _ hRA ⟨32, by decide⟩ ⟨2, by decide⟩ 32#32 rfl _ hwA_32 _ (k1_off9_form ⟨2, by decide⟩ _ _) _ _
      have aA2_34 : pair0_region.sl.v1727_8 d L tab k r g1 g2 hR hin = AccMath.accVec (rowF fl tab (wL L).val (2 * t1.val) (2 * k.val)) (offF fl (wL L).val (2 * t1.val) (2 * k.val)) 2 34 := by
        unfold pair0_region.sl.v1727_8; rw [aA2_33]
        exact acc_step d L fl tab (wL L).val (2 * t1.val) (2 * k.val) 0 _ hRA ⟨33, by decide⟩ ⟨2, by decide⟩ 32#32 rfl _ hwA_33 _ (k1_off10_form ⟨2, by decide⟩ _ _) _ _
      have aA2_35 : pair0_region.sl.v1763_8 d L tab k r g1 g2 hR hin = AccMath.accVec (rowF fl tab (wL L).val (2 * t1.val) (2 * k.val)) (offF fl (wL L).val (2 * t1.val) (2 * k.val)) 2 35 := by
        unfold pair0_region.sl.v1763_8; rw [aA2_34]
        exact acc_step d L fl tab (wL L).val (2 * t1.val) (2 * k.val) 0 _ hRA ⟨34, by decide⟩ ⟨2, by decide⟩ 32#32 rfl _ hwA_34 _ (k1_off11_form ⟨2, by decide⟩ _ _) _ _
      have aA2_36 : pair0_region.sl.v1799_8 d L tab k r g1 g2 hR hin = AccMath.accVec (rowF fl tab (wL L).val (2 * t1.val) (2 * k.val)) (offF fl (wL L).val (2 * t1.val) (2 * k.val)) 2 36 := by
        unfold pair0_region.sl.v1799_8; rw [aA2_35]
        exact acc_step d L fl tab (wL L).val (2 * t1.val) (2 * k.val) 0 _ hRA ⟨35, by decide⟩ ⟨2, by decide⟩ 32#32 rfl _ hwA_35 _ (k1_off12_form ⟨2, by decide⟩ _ _) _ _
      have aA2_37 : pair0_region.sl.v1835_8 d L tab k r g1 g2 hR hin = AccMath.accVec (rowF fl tab (wL L).val (2 * t1.val) (2 * k.val)) (offF fl (wL L).val (2 * t1.val) (2 * k.val)) 2 37 := by
        unfold pair0_region.sl.v1835_8; rw [aA2_36]
        exact acc_step d L fl tab (wL L).val (2 * t1.val) (2 * k.val) 0 _ hRA ⟨36, by decide⟩ ⟨2, by decide⟩ 32#32 rfl _ hwA_36 _ (k1_off13_form ⟨2, by decide⟩ _ _) _ _
      have aA2_38 : pair0_region.sl.v1871_8 d L tab k r g1 g2 hR hin = AccMath.accVec (rowF fl tab (wL L).val (2 * t1.val) (2 * k.val)) (offF fl (wL L).val (2 * t1.val) (2 * k.val)) 2 38 := by
        unfold pair0_region.sl.v1871_8; rw [aA2_37]
        exact acc_step d L fl tab (wL L).val (2 * t1.val) (2 * k.val) 0 _ hRA ⟨37, by decide⟩ ⟨2, by decide⟩ 32#32 rfl _ hwA_37 _ (k1_off14_form ⟨2, by decide⟩ _ _) _ _
      have aA2_39 : pair0_region.sl.v1907_8 d L tab k r g1 g2 hR hin = AccMath.accVec (rowF fl tab (wL L).val (2 * t1.val) (2 * k.val)) (offF fl (wL L).val (2 * t1.val) (2 * k.val)) 2 39 := by
        unfold pair0_region.sl.v1907_8; rw [aA2_38]
        exact acc_step d L fl tab (wL L).val (2 * t1.val) (2 * k.val) 0 _ hRA ⟨38, by decide⟩ ⟨2, by decide⟩ 32#32 rfl _ hwA_38 _ (k1_off15_form ⟨2, by decide⟩ _ _) _ _
      have aA2_40 : pair0_region.sl.v1943_8 d L tab k r g1 g2 hR hin = AccMath.accVec (rowF fl tab (wL L).val (2 * t1.val) (2 * k.val)) (offF fl (wL L).val (2 * t1.val) (2 * k.val)) 2 40 := by
        unfold pair0_region.sl.v1943_8; rw [aA2_39]
        exact acc_step d L fl tab (wL L).val (2 * t1.val) (2 * k.val) 0 _ hRA ⟨39, by decide⟩ ⟨2, by decide⟩ 32#32 rfl _ hwA_39 _ (k1_off16_form ⟨2, by decide⟩ _ _) _ _
      have aA2_41 : pair0_region.sl.v1979_8 d L tab k r g1 g2 hR hin = AccMath.accVec (rowF fl tab (wL L).val (2 * t1.val) (2 * k.val)) (offF fl (wL L).val (2 * t1.val) (2 * k.val)) 2 41 := by
        unfold pair0_region.sl.v1979_8; rw [aA2_40]
        exact acc_step d L fl tab (wL L).val (2 * t1.val) (2 * k.val) 0 _ hRA ⟨40, by decide⟩ ⟨2, by decide⟩ 32#32 rfl _ hwA_40 _ (k1_off17_form ⟨2, by decide⟩ _ _) _ _
      have aA2_42 : pair0_region.sl.v2015_8 d L tab k r g1 g2 hR hin = AccMath.accVec (rowF fl tab (wL L).val (2 * t1.val) (2 * k.val)) (offF fl (wL L).val (2 * t1.val) (2 * k.val)) 2 42 := by
        unfold pair0_region.sl.v2015_8; rw [aA2_41]
        exact acc_step d L fl tab (wL L).val (2 * t1.val) (2 * k.val) 0 _ hRA ⟨41, by decide⟩ ⟨2, by decide⟩ 32#32 rfl _ hwA_41 _ (k1_off18_form ⟨2, by decide⟩ _ _) _ _
      have aA2_43 : pair0_region.sl.v2051_8 d L tab k r g1 g2 hR hin = AccMath.accVec (rowF fl tab (wL L).val (2 * t1.val) (2 * k.val)) (offF fl (wL L).val (2 * t1.val) (2 * k.val)) 2 43 := by
        unfold pair0_region.sl.v2051_8; rw [aA2_42]
        exact acc_step d L fl tab (wL L).val (2 * t1.val) (2 * k.val) 0 _ hRA ⟨42, by decide⟩ ⟨2, by decide⟩ 32#32 rfl _ hwA_42 _ (k1_off19_form ⟨2, by decide⟩ _ _) _ _
      have aA2_44 : pair0_region.sl.v2087_8 d L tab k r g1 g2 hR hin = AccMath.accVec (rowF fl tab (wL L).val (2 * t1.val) (2 * k.val)) (offF fl (wL L).val (2 * t1.val) (2 * k.val)) 2 44 := by
        unfold pair0_region.sl.v2087_8; rw [aA2_43]
        exact acc_step d L fl tab (wL L).val (2 * t1.val) (2 * k.val) 0 _ hRA ⟨43, by decide⟩ ⟨2, by decide⟩ 32#32 rfl _ hwA_43 _ (k1_off20_form ⟨2, by decide⟩ _ _) _ _
      have aA2_45 : pair0_region.sl.v2123_8 d L tab k r g1 g2 hR hin = AccMath.accVec (rowF fl tab (wL L).val (2 * t1.val) (2 * k.val)) (offF fl (wL L).val (2 * t1.val) (2 * k.val)) 2 45 := by
        unfold pair0_region.sl.v2123_8; rw [aA2_44]
        exact acc_step d L fl tab (wL L).val (2 * t1.val) (2 * k.val) 0 _ hRA ⟨44, by decide⟩ ⟨2, by decide⟩ 32#32 rfl _ hwA_44 _ (k1_off21_form ⟨2, by decide⟩ _ _) _ _
      have aA2_46 : pair0_region.sl.v2159_8 d L tab k r g1 g2 hR hin = AccMath.accVec (rowF fl tab (wL L).val (2 * t1.val) (2 * k.val)) (offF fl (wL L).val (2 * t1.val) (2 * k.val)) 2 46 := by
        unfold pair0_region.sl.v2159_8; rw [aA2_45]
        exact acc_step d L fl tab (wL L).val (2 * t1.val) (2 * k.val) 0 _ hRA ⟨45, by decide⟩ ⟨2, by decide⟩ 32#32 rfl _ hwA_45 _ (k1_off22_form ⟨2, by decide⟩ _ _) _ _
      have aA2_47 : pair0_region.sl.v2195_8 d L tab k r g1 g2 hR hin = AccMath.accVec (rowF fl tab (wL L).val (2 * t1.val) (2 * k.val)) (offF fl (wL L).val (2 * t1.val) (2 * k.val)) 2 47 := by
        unfold pair0_region.sl.v2195_8; rw [aA2_46]
        exact acc_step d L fl tab (wL L).val (2 * t1.val) (2 * k.val) 0 _ hRA ⟨46, by decide⟩ ⟨2, by decide⟩ 32#32 rfl _ hwA_46 _ (k1_off23_form ⟨2, by decide⟩ _ _) _ _
      have aA2_48 : pair0_region.sl.v2231_8 d L tab k r g1 g2 hR hin = AccMath.accVec (rowF fl tab (wL L).val (2 * t1.val) (2 * k.val)) (offF fl (wL L).val (2 * t1.val) (2 * k.val)) 2 48 := by
        unfold pair0_region.sl.v2231_8; rw [aA2_47]
        exact acc_step d L fl tab (wL L).val (2 * t1.val) (2 * k.val) 0 _ hRA ⟨47, by decide⟩ ⟨2, by decide⟩ 32#32 rfl _ hwA_47 _ (k1_off24_form ⟨2, by decide⟩ _ _) _ _
      have aA2_49 : pair0_region.sl.v1480_1 d L tab k r g1 g2 hR hin = AccMath.accVec (rowF fl tab (wL L).val (2 * t1.val) (2 * k.val)) (offF fl (wL L).val (2 * t1.val) (2 * k.val)) 2 49 := by
        unfold pair0_region.sl.v1480_1; rw [aA2_48]
        exact acc_step d L fl tab (wL L).val (2 * t1.val) (2 * k.val) 0 _ hRA ⟨48, by decide⟩ ⟨2, by decide⟩ 32#32 rfl _ hwA_48 _ (k1_off26_form _ _) _ _
      have aA2_50 : pair0_region.sl.v1514_1 d L tab k r g1 g2 hR hin = AccMath.accVec (rowF fl tab (wL L).val (2 * t1.val) (2 * k.val)) (offF fl (wL L).val (2 * t1.val) (2 * k.val)) 2 50 := by
        unfold pair0_region.sl.v1514_1; rw [aA2_49]
        exact acc_step d L fl tab (wL L).val (2 * t1.val) (2 * k.val) 0 _ hRA ⟨49, by decide⟩ ⟨2, by decide⟩ 32#32 rfl _ hwA_49 _ (k1_off27_form _ _) _ _
      have hPA2 : ∀ x : S1x1x16.Idx, pair0_region.sl.v1537_1 d L tab k r g1 g2 hR hin x = Spec.bagPartial fl tab (128 * (wL L).val + 16 * (2 * t1.val) + (2 * k.val)) (16 * 2 + (x 2).val) 50 := fun x => by
        unfold pair0_region.sl.v1537_1; rw [aA2_50]; exact payload_ok fl tab (wL L).val (2 * t1.val) (2 * k.val) ⟨2, by decide⟩ _ x
      have aA3_0 : pair0_region.sl.v1445_1 = AccMath.accVec (rowF fl tab (wL L).val (2 * t1.val) (2 * k.val)) (offF fl (wL L).val (2 * t1.val) (2 * k.val)) 3 0 := acc_zero fl tab (wL L).val (2 * t1.val) (2 * k.val) 3
      have aA3_1 : pair0_region.sl.v1699_6 d L tab k r g1 g2 hR hin = AccMath.accVec (rowF fl tab (wL L).val (2 * t1.val) (2 * k.val)) (offF fl (wL L).val (2 * t1.val) (2 * k.val)) 3 1 := by
        unfold pair0_region.sl.v1699_6; rw [aA3_0]
        exact acc_step d L fl tab (wL L).val (2 * t1.val) (2 * k.val) 0 _ hRA ⟨0, by decide⟩ ⟨3, by decide⟩ 48#32 rfl _ hwA_0 _ (k1_off9_form ⟨0, by decide⟩ _ _) _ _
      have aA3_2 : pair0_region.sl.v1735_6 d L tab k r g1 g2 hR hin = AccMath.accVec (rowF fl tab (wL L).val (2 * t1.val) (2 * k.val)) (offF fl (wL L).val (2 * t1.val) (2 * k.val)) 3 2 := by
        unfold pair0_region.sl.v1735_6; rw [aA3_1]
        exact acc_step d L fl tab (wL L).val (2 * t1.val) (2 * k.val) 0 _ hRA ⟨1, by decide⟩ ⟨3, by decide⟩ 48#32 rfl _ hwA_1 _ (k1_off10_form ⟨0, by decide⟩ _ _) _ _
      have aA3_3 : pair0_region.sl.v1771_6 d L tab k r g1 g2 hR hin = AccMath.accVec (rowF fl tab (wL L).val (2 * t1.val) (2 * k.val)) (offF fl (wL L).val (2 * t1.val) (2 * k.val)) 3 3 := by
        unfold pair0_region.sl.v1771_6; rw [aA3_2]
        exact acc_step d L fl tab (wL L).val (2 * t1.val) (2 * k.val) 0 _ hRA ⟨2, by decide⟩ ⟨3, by decide⟩ 48#32 rfl _ hwA_2 _ (k1_off11_form ⟨0, by decide⟩ _ _) _ _
      have aA3_4 : pair0_region.sl.v1807_6 d L tab k r g1 g2 hR hin = AccMath.accVec (rowF fl tab (wL L).val (2 * t1.val) (2 * k.val)) (offF fl (wL L).val (2 * t1.val) (2 * k.val)) 3 4 := by
        unfold pair0_region.sl.v1807_6; rw [aA3_3]
        exact acc_step d L fl tab (wL L).val (2 * t1.val) (2 * k.val) 0 _ hRA ⟨3, by decide⟩ ⟨3, by decide⟩ 48#32 rfl _ hwA_3 _ (k1_off12_form ⟨0, by decide⟩ _ _) _ _
      have aA3_5 : pair0_region.sl.v1843_6 d L tab k r g1 g2 hR hin = AccMath.accVec (rowF fl tab (wL L).val (2 * t1.val) (2 * k.val)) (offF fl (wL L).val (2 * t1.val) (2 * k.val)) 3 5 := by
        unfold pair0_region.sl.v1843_6; rw [aA3_4]
        exact acc_step d L fl tab (wL L).val (2 * t1.val) (2 * k.val) 0 _ hRA ⟨4, by decide⟩ ⟨3, by decide⟩ 48#32 rfl _ hwA_4 _ (k1_off13_form ⟨0, by decide⟩ _ _) _ _
      have aA3_6 : pair0_region.sl.v1879_6 d L tab k r g1 g2 hR hin = AccMath.accVec (rowF fl tab (wL L).val (2 * t1.val) (2 * k.val)) (offF fl (wL L).val (2 * t1.val) (2 * k.val)) 3 6 := by
        unfold pair0_region.sl.v1879_6; rw [aA3_5]
        exact acc_step d L fl tab (wL L).val (2 * t1.val) (2 * k.val) 0 _ hRA ⟨5, by decide⟩ ⟨3, by decide⟩ 48#32 rfl _ hwA_5 _ (k1_off14_form ⟨0, by decide⟩ _ _) _ _
      have aA3_7 : pair0_region.sl.v1915_6 d L tab k r g1 g2 hR hin = AccMath.accVec (rowF fl tab (wL L).val (2 * t1.val) (2 * k.val)) (offF fl (wL L).val (2 * t1.val) (2 * k.val)) 3 7 := by
        unfold pair0_region.sl.v1915_6; rw [aA3_6]
        exact acc_step d L fl tab (wL L).val (2 * t1.val) (2 * k.val) 0 _ hRA ⟨6, by decide⟩ ⟨3, by decide⟩ 48#32 rfl _ hwA_6 _ (k1_off15_form ⟨0, by decide⟩ _ _) _ _
      have aA3_8 : pair0_region.sl.v1951_6 d L tab k r g1 g2 hR hin = AccMath.accVec (rowF fl tab (wL L).val (2 * t1.val) (2 * k.val)) (offF fl (wL L).val (2 * t1.val) (2 * k.val)) 3 8 := by
        unfold pair0_region.sl.v1951_6; rw [aA3_7]
        exact acc_step d L fl tab (wL L).val (2 * t1.val) (2 * k.val) 0 _ hRA ⟨7, by decide⟩ ⟨3, by decide⟩ 48#32 rfl _ hwA_7 _ (k1_off16_form ⟨0, by decide⟩ _ _) _ _
      have aA3_9 : pair0_region.sl.v1987_6 d L tab k r g1 g2 hR hin = AccMath.accVec (rowF fl tab (wL L).val (2 * t1.val) (2 * k.val)) (offF fl (wL L).val (2 * t1.val) (2 * k.val)) 3 9 := by
        unfold pair0_region.sl.v1987_6; rw [aA3_8]
        exact acc_step d L fl tab (wL L).val (2 * t1.val) (2 * k.val) 0 _ hRA ⟨8, by decide⟩ ⟨3, by decide⟩ 48#32 rfl _ hwA_8 _ (k1_off17_form ⟨0, by decide⟩ _ _) _ _
      have aA3_10 : pair0_region.sl.v2023_6 d L tab k r g1 g2 hR hin = AccMath.accVec (rowF fl tab (wL L).val (2 * t1.val) (2 * k.val)) (offF fl (wL L).val (2 * t1.val) (2 * k.val)) 3 10 := by
        unfold pair0_region.sl.v2023_6; rw [aA3_9]
        exact acc_step d L fl tab (wL L).val (2 * t1.val) (2 * k.val) 0 _ hRA ⟨9, by decide⟩ ⟨3, by decide⟩ 48#32 rfl _ hwA_9 _ (k1_off18_form ⟨0, by decide⟩ _ _) _ _
      have aA3_11 : pair0_region.sl.v2059_6 d L tab k r g1 g2 hR hin = AccMath.accVec (rowF fl tab (wL L).val (2 * t1.val) (2 * k.val)) (offF fl (wL L).val (2 * t1.val) (2 * k.val)) 3 11 := by
        unfold pair0_region.sl.v2059_6; rw [aA3_10]
        exact acc_step d L fl tab (wL L).val (2 * t1.val) (2 * k.val) 0 _ hRA ⟨10, by decide⟩ ⟨3, by decide⟩ 48#32 rfl _ hwA_10 _ (k1_off19_form ⟨0, by decide⟩ _ _) _ _
      have aA3_12 : pair0_region.sl.v2095_6 d L tab k r g1 g2 hR hin = AccMath.accVec (rowF fl tab (wL L).val (2 * t1.val) (2 * k.val)) (offF fl (wL L).val (2 * t1.val) (2 * k.val)) 3 12 := by
        unfold pair0_region.sl.v2095_6; rw [aA3_11]
        exact acc_step d L fl tab (wL L).val (2 * t1.val) (2 * k.val) 0 _ hRA ⟨11, by decide⟩ ⟨3, by decide⟩ 48#32 rfl _ hwA_11 _ (k1_off20_form ⟨0, by decide⟩ _ _) _ _
      have aA3_13 : pair0_region.sl.v2131_6 d L tab k r g1 g2 hR hin = AccMath.accVec (rowF fl tab (wL L).val (2 * t1.val) (2 * k.val)) (offF fl (wL L).val (2 * t1.val) (2 * k.val)) 3 13 := by
        unfold pair0_region.sl.v2131_6; rw [aA3_12]
        exact acc_step d L fl tab (wL L).val (2 * t1.val) (2 * k.val) 0 _ hRA ⟨12, by decide⟩ ⟨3, by decide⟩ 48#32 rfl _ hwA_12 _ (k1_off21_form ⟨0, by decide⟩ _ _) _ _
      have aA3_14 : pair0_region.sl.v2167_6 d L tab k r g1 g2 hR hin = AccMath.accVec (rowF fl tab (wL L).val (2 * t1.val) (2 * k.val)) (offF fl (wL L).val (2 * t1.val) (2 * k.val)) 3 14 := by
        unfold pair0_region.sl.v2167_6; rw [aA3_13]
        exact acc_step d L fl tab (wL L).val (2 * t1.val) (2 * k.val) 0 _ hRA ⟨13, by decide⟩ ⟨3, by decide⟩ 48#32 rfl _ hwA_13 _ (k1_off22_form ⟨0, by decide⟩ _ _) _ _
      have aA3_15 : pair0_region.sl.v2203_6 d L tab k r g1 g2 hR hin = AccMath.accVec (rowF fl tab (wL L).val (2 * t1.val) (2 * k.val)) (offF fl (wL L).val (2 * t1.val) (2 * k.val)) 3 15 := by
        unfold pair0_region.sl.v2203_6; rw [aA3_14]
        exact acc_step d L fl tab (wL L).val (2 * t1.val) (2 * k.val) 0 _ hRA ⟨14, by decide⟩ ⟨3, by decide⟩ 48#32 rfl _ hwA_14 _ (k1_off23_form ⟨0, by decide⟩ _ _) _ _
      have aA3_16 : pair0_region.sl.v2239_6 d L tab k r g1 g2 hR hin = AccMath.accVec (rowF fl tab (wL L).val (2 * t1.val) (2 * k.val)) (offF fl (wL L).val (2 * t1.val) (2 * k.val)) 3 16 := by
        unfold pair0_region.sl.v2239_6; rw [aA3_15]
        exact acc_step d L fl tab (wL L).val (2 * t1.val) (2 * k.val) 0 _ hRA ⟨15, by decide⟩ ⟨3, by decide⟩ 48#32 rfl _ hwA_15 _ (k1_off24_form ⟨0, by decide⟩ _ _) _ _
      have aA3_17 : pair0_region.sl.v1699_7 d L tab k r g1 g2 hR hin = AccMath.accVec (rowF fl tab (wL L).val (2 * t1.val) (2 * k.val)) (offF fl (wL L).val (2 * t1.val) (2 * k.val)) 3 17 := by
        unfold pair0_region.sl.v1699_7; rw [aA3_16]
        exact acc_step d L fl tab (wL L).val (2 * t1.val) (2 * k.val) 0 _ hRA ⟨16, by decide⟩ ⟨3, by decide⟩ 48#32 rfl _ hwA_16 _ (k1_off9_form ⟨1, by decide⟩ _ _) _ _
      have aA3_18 : pair0_region.sl.v1735_7 d L tab k r g1 g2 hR hin = AccMath.accVec (rowF fl tab (wL L).val (2 * t1.val) (2 * k.val)) (offF fl (wL L).val (2 * t1.val) (2 * k.val)) 3 18 := by
        unfold pair0_region.sl.v1735_7; rw [aA3_17]
        exact acc_step d L fl tab (wL L).val (2 * t1.val) (2 * k.val) 0 _ hRA ⟨17, by decide⟩ ⟨3, by decide⟩ 48#32 rfl _ hwA_17 _ (k1_off10_form ⟨1, by decide⟩ _ _) _ _
      have aA3_19 : pair0_region.sl.v1771_7 d L tab k r g1 g2 hR hin = AccMath.accVec (rowF fl tab (wL L).val (2 * t1.val) (2 * k.val)) (offF fl (wL L).val (2 * t1.val) (2 * k.val)) 3 19 := by
        unfold pair0_region.sl.v1771_7; rw [aA3_18]
        exact acc_step d L fl tab (wL L).val (2 * t1.val) (2 * k.val) 0 _ hRA ⟨18, by decide⟩ ⟨3, by decide⟩ 48#32 rfl _ hwA_18 _ (k1_off11_form ⟨1, by decide⟩ _ _) _ _
      have aA3_20 : pair0_region.sl.v1807_7 d L tab k r g1 g2 hR hin = AccMath.accVec (rowF fl tab (wL L).val (2 * t1.val) (2 * k.val)) (offF fl (wL L).val (2 * t1.val) (2 * k.val)) 3 20 := by
        unfold pair0_region.sl.v1807_7; rw [aA3_19]
        exact acc_step d L fl tab (wL L).val (2 * t1.val) (2 * k.val) 0 _ hRA ⟨19, by decide⟩ ⟨3, by decide⟩ 48#32 rfl _ hwA_19 _ (k1_off12_form ⟨1, by decide⟩ _ _) _ _
      have aA3_21 : pair0_region.sl.v1843_7 d L tab k r g1 g2 hR hin = AccMath.accVec (rowF fl tab (wL L).val (2 * t1.val) (2 * k.val)) (offF fl (wL L).val (2 * t1.val) (2 * k.val)) 3 21 := by
        unfold pair0_region.sl.v1843_7; rw [aA3_20]
        exact acc_step d L fl tab (wL L).val (2 * t1.val) (2 * k.val) 0 _ hRA ⟨20, by decide⟩ ⟨3, by decide⟩ 48#32 rfl _ hwA_20 _ (k1_off13_form ⟨1, by decide⟩ _ _) _ _
      have aA3_22 : pair0_region.sl.v1879_7 d L tab k r g1 g2 hR hin = AccMath.accVec (rowF fl tab (wL L).val (2 * t1.val) (2 * k.val)) (offF fl (wL L).val (2 * t1.val) (2 * k.val)) 3 22 := by
        unfold pair0_region.sl.v1879_7; rw [aA3_21]
        exact acc_step d L fl tab (wL L).val (2 * t1.val) (2 * k.val) 0 _ hRA ⟨21, by decide⟩ ⟨3, by decide⟩ 48#32 rfl _ hwA_21 _ (k1_off14_form ⟨1, by decide⟩ _ _) _ _
      have aA3_23 : pair0_region.sl.v1915_7 d L tab k r g1 g2 hR hin = AccMath.accVec (rowF fl tab (wL L).val (2 * t1.val) (2 * k.val)) (offF fl (wL L).val (2 * t1.val) (2 * k.val)) 3 23 := by
        unfold pair0_region.sl.v1915_7; rw [aA3_22]
        exact acc_step d L fl tab (wL L).val (2 * t1.val) (2 * k.val) 0 _ hRA ⟨22, by decide⟩ ⟨3, by decide⟩ 48#32 rfl _ hwA_22 _ (k1_off15_form ⟨1, by decide⟩ _ _) _ _
      have aA3_24 : pair0_region.sl.v1951_7 d L tab k r g1 g2 hR hin = AccMath.accVec (rowF fl tab (wL L).val (2 * t1.val) (2 * k.val)) (offF fl (wL L).val (2 * t1.val) (2 * k.val)) 3 24 := by
        unfold pair0_region.sl.v1951_7; rw [aA3_23]
        exact acc_step d L fl tab (wL L).val (2 * t1.val) (2 * k.val) 0 _ hRA ⟨23, by decide⟩ ⟨3, by decide⟩ 48#32 rfl _ hwA_23 _ (k1_off16_form ⟨1, by decide⟩ _ _) _ _
      have aA3_25 : pair0_region.sl.v1987_7 d L tab k r g1 g2 hR hin = AccMath.accVec (rowF fl tab (wL L).val (2 * t1.val) (2 * k.val)) (offF fl (wL L).val (2 * t1.val) (2 * k.val)) 3 25 := by
        unfold pair0_region.sl.v1987_7; rw [aA3_24]
        exact acc_step d L fl tab (wL L).val (2 * t1.val) (2 * k.val) 0 _ hRA ⟨24, by decide⟩ ⟨3, by decide⟩ 48#32 rfl _ hwA_24 _ (k1_off17_form ⟨1, by decide⟩ _ _) _ _
      have aA3_26 : pair0_region.sl.v2023_7 d L tab k r g1 g2 hR hin = AccMath.accVec (rowF fl tab (wL L).val (2 * t1.val) (2 * k.val)) (offF fl (wL L).val (2 * t1.val) (2 * k.val)) 3 26 := by
        unfold pair0_region.sl.v2023_7; rw [aA3_25]
        exact acc_step d L fl tab (wL L).val (2 * t1.val) (2 * k.val) 0 _ hRA ⟨25, by decide⟩ ⟨3, by decide⟩ 48#32 rfl _ hwA_25 _ (k1_off18_form ⟨1, by decide⟩ _ _) _ _
      have aA3_27 : pair0_region.sl.v2059_7 d L tab k r g1 g2 hR hin = AccMath.accVec (rowF fl tab (wL L).val (2 * t1.val) (2 * k.val)) (offF fl (wL L).val (2 * t1.val) (2 * k.val)) 3 27 := by
        unfold pair0_region.sl.v2059_7; rw [aA3_26]
        exact acc_step d L fl tab (wL L).val (2 * t1.val) (2 * k.val) 0 _ hRA ⟨26, by decide⟩ ⟨3, by decide⟩ 48#32 rfl _ hwA_26 _ (k1_off19_form ⟨1, by decide⟩ _ _) _ _
      have aA3_28 : pair0_region.sl.v2095_7 d L tab k r g1 g2 hR hin = AccMath.accVec (rowF fl tab (wL L).val (2 * t1.val) (2 * k.val)) (offF fl (wL L).val (2 * t1.val) (2 * k.val)) 3 28 := by
        unfold pair0_region.sl.v2095_7; rw [aA3_27]
        exact acc_step d L fl tab (wL L).val (2 * t1.val) (2 * k.val) 0 _ hRA ⟨27, by decide⟩ ⟨3, by decide⟩ 48#32 rfl _ hwA_27 _ (k1_off20_form ⟨1, by decide⟩ _ _) _ _
      have aA3_29 : pair0_region.sl.v2131_7 d L tab k r g1 g2 hR hin = AccMath.accVec (rowF fl tab (wL L).val (2 * t1.val) (2 * k.val)) (offF fl (wL L).val (2 * t1.val) (2 * k.val)) 3 29 := by
        unfold pair0_region.sl.v2131_7; rw [aA3_28]
        exact acc_step d L fl tab (wL L).val (2 * t1.val) (2 * k.val) 0 _ hRA ⟨28, by decide⟩ ⟨3, by decide⟩ 48#32 rfl _ hwA_28 _ (k1_off21_form ⟨1, by decide⟩ _ _) _ _
      have aA3_30 : pair0_region.sl.v2167_7 d L tab k r g1 g2 hR hin = AccMath.accVec (rowF fl tab (wL L).val (2 * t1.val) (2 * k.val)) (offF fl (wL L).val (2 * t1.val) (2 * k.val)) 3 30 := by
        unfold pair0_region.sl.v2167_7; rw [aA3_29]
        exact acc_step d L fl tab (wL L).val (2 * t1.val) (2 * k.val) 0 _ hRA ⟨29, by decide⟩ ⟨3, by decide⟩ 48#32 rfl _ hwA_29 _ (k1_off22_form ⟨1, by decide⟩ _ _) _ _
      have aA3_31 : pair0_region.sl.v2203_7 d L tab k r g1 g2 hR hin = AccMath.accVec (rowF fl tab (wL L).val (2 * t1.val) (2 * k.val)) (offF fl (wL L).val (2 * t1.val) (2 * k.val)) 3 31 := by
        unfold pair0_region.sl.v2203_7; rw [aA3_30]
        exact acc_step d L fl tab (wL L).val (2 * t1.val) (2 * k.val) 0 _ hRA ⟨30, by decide⟩ ⟨3, by decide⟩ 48#32 rfl _ hwA_30 _ (k1_off23_form ⟨1, by decide⟩ _ _) _ _
      have aA3_32 : pair0_region.sl.v2239_7 d L tab k r g1 g2 hR hin = AccMath.accVec (rowF fl tab (wL L).val (2 * t1.val) (2 * k.val)) (offF fl (wL L).val (2 * t1.val) (2 * k.val)) 3 32 := by
        unfold pair0_region.sl.v2239_7; rw [aA3_31]
        exact acc_step d L fl tab (wL L).val (2 * t1.val) (2 * k.val) 0 _ hRA ⟨31, by decide⟩ ⟨3, by decide⟩ 48#32 rfl _ hwA_31 _ (k1_off24_form ⟨1, by decide⟩ _ _) _ _
      have aA3_33 : pair0_region.sl.v1699_8 d L tab k r g1 g2 hR hin = AccMath.accVec (rowF fl tab (wL L).val (2 * t1.val) (2 * k.val)) (offF fl (wL L).val (2 * t1.val) (2 * k.val)) 3 33 := by
        unfold pair0_region.sl.v1699_8; rw [aA3_32]
        exact acc_step d L fl tab (wL L).val (2 * t1.val) (2 * k.val) 0 _ hRA ⟨32, by decide⟩ ⟨3, by decide⟩ 48#32 rfl _ hwA_32 _ (k1_off9_form ⟨2, by decide⟩ _ _) _ _
      have aA3_34 : pair0_region.sl.v1735_8 d L tab k r g1 g2 hR hin = AccMath.accVec (rowF fl tab (wL L).val (2 * t1.val) (2 * k.val)) (offF fl (wL L).val (2 * t1.val) (2 * k.val)) 3 34 := by
        unfold pair0_region.sl.v1735_8; rw [aA3_33]
        exact acc_step d L fl tab (wL L).val (2 * t1.val) (2 * k.val) 0 _ hRA ⟨33, by decide⟩ ⟨3, by decide⟩ 48#32 rfl _ hwA_33 _ (k1_off10_form ⟨2, by decide⟩ _ _) _ _
      have aA3_35 : pair0_region.sl.v1771_8 d L tab k r g1 g2 hR hin = AccMath.accVec (rowF fl tab (wL L).val (2 * t1.val) (2 * k.val)) (offF fl (wL L).val (2 * t1.val) (2 * k.val)) 3 35 := by
        unfold pair0_region.sl.v1771_8; rw [aA3_34]
        exact acc_step d L fl tab (wL L).val (2 * t1.val) (2 * k.val) 0 _ hRA ⟨34, by decide⟩ ⟨3, by decide⟩ 48#32 rfl _ hwA_34 _ (k1_off11_form ⟨2, by decide⟩ _ _) _ _
      have aA3_36 : pair0_region.sl.v1807_8 d L tab k r g1 g2 hR hin = AccMath.accVec (rowF fl tab (wL L).val (2 * t1.val) (2 * k.val)) (offF fl (wL L).val (2 * t1.val) (2 * k.val)) 3 36 := by
        unfold pair0_region.sl.v1807_8; rw [aA3_35]
        exact acc_step d L fl tab (wL L).val (2 * t1.val) (2 * k.val) 0 _ hRA ⟨35, by decide⟩ ⟨3, by decide⟩ 48#32 rfl _ hwA_35 _ (k1_off12_form ⟨2, by decide⟩ _ _) _ _
      have aA3_37 : pair0_region.sl.v1843_8 d L tab k r g1 g2 hR hin = AccMath.accVec (rowF fl tab (wL L).val (2 * t1.val) (2 * k.val)) (offF fl (wL L).val (2 * t1.val) (2 * k.val)) 3 37 := by
        unfold pair0_region.sl.v1843_8; rw [aA3_36]
        exact acc_step d L fl tab (wL L).val (2 * t1.val) (2 * k.val) 0 _ hRA ⟨36, by decide⟩ ⟨3, by decide⟩ 48#32 rfl _ hwA_36 _ (k1_off13_form ⟨2, by decide⟩ _ _) _ _
      have aA3_38 : pair0_region.sl.v1879_8 d L tab k r g1 g2 hR hin = AccMath.accVec (rowF fl tab (wL L).val (2 * t1.val) (2 * k.val)) (offF fl (wL L).val (2 * t1.val) (2 * k.val)) 3 38 := by
        unfold pair0_region.sl.v1879_8; rw [aA3_37]
        exact acc_step d L fl tab (wL L).val (2 * t1.val) (2 * k.val) 0 _ hRA ⟨37, by decide⟩ ⟨3, by decide⟩ 48#32 rfl _ hwA_37 _ (k1_off14_form ⟨2, by decide⟩ _ _) _ _
      have aA3_39 : pair0_region.sl.v1915_8 d L tab k r g1 g2 hR hin = AccMath.accVec (rowF fl tab (wL L).val (2 * t1.val) (2 * k.val)) (offF fl (wL L).val (2 * t1.val) (2 * k.val)) 3 39 := by
        unfold pair0_region.sl.v1915_8; rw [aA3_38]
        exact acc_step d L fl tab (wL L).val (2 * t1.val) (2 * k.val) 0 _ hRA ⟨38, by decide⟩ ⟨3, by decide⟩ 48#32 rfl _ hwA_38 _ (k1_off15_form ⟨2, by decide⟩ _ _) _ _
      have aA3_40 : pair0_region.sl.v1951_8 d L tab k r g1 g2 hR hin = AccMath.accVec (rowF fl tab (wL L).val (2 * t1.val) (2 * k.val)) (offF fl (wL L).val (2 * t1.val) (2 * k.val)) 3 40 := by
        unfold pair0_region.sl.v1951_8; rw [aA3_39]
        exact acc_step d L fl tab (wL L).val (2 * t1.val) (2 * k.val) 0 _ hRA ⟨39, by decide⟩ ⟨3, by decide⟩ 48#32 rfl _ hwA_39 _ (k1_off16_form ⟨2, by decide⟩ _ _) _ _
      have aA3_41 : pair0_region.sl.v1987_8 d L tab k r g1 g2 hR hin = AccMath.accVec (rowF fl tab (wL L).val (2 * t1.val) (2 * k.val)) (offF fl (wL L).val (2 * t1.val) (2 * k.val)) 3 41 := by
        unfold pair0_region.sl.v1987_8; rw [aA3_40]
        exact acc_step d L fl tab (wL L).val (2 * t1.val) (2 * k.val) 0 _ hRA ⟨40, by decide⟩ ⟨3, by decide⟩ 48#32 rfl _ hwA_40 _ (k1_off17_form ⟨2, by decide⟩ _ _) _ _
      have aA3_42 : pair0_region.sl.v2023_8 d L tab k r g1 g2 hR hin = AccMath.accVec (rowF fl tab (wL L).val (2 * t1.val) (2 * k.val)) (offF fl (wL L).val (2 * t1.val) (2 * k.val)) 3 42 := by
        unfold pair0_region.sl.v2023_8; rw [aA3_41]
        exact acc_step d L fl tab (wL L).val (2 * t1.val) (2 * k.val) 0 _ hRA ⟨41, by decide⟩ ⟨3, by decide⟩ 48#32 rfl _ hwA_41 _ (k1_off18_form ⟨2, by decide⟩ _ _) _ _
      have aA3_43 : pair0_region.sl.v2059_8 d L tab k r g1 g2 hR hin = AccMath.accVec (rowF fl tab (wL L).val (2 * t1.val) (2 * k.val)) (offF fl (wL L).val (2 * t1.val) (2 * k.val)) 3 43 := by
        unfold pair0_region.sl.v2059_8; rw [aA3_42]
        exact acc_step d L fl tab (wL L).val (2 * t1.val) (2 * k.val) 0 _ hRA ⟨42, by decide⟩ ⟨3, by decide⟩ 48#32 rfl _ hwA_42 _ (k1_off19_form ⟨2, by decide⟩ _ _) _ _
      have aA3_44 : pair0_region.sl.v2095_8 d L tab k r g1 g2 hR hin = AccMath.accVec (rowF fl tab (wL L).val (2 * t1.val) (2 * k.val)) (offF fl (wL L).val (2 * t1.val) (2 * k.val)) 3 44 := by
        unfold pair0_region.sl.v2095_8; rw [aA3_43]
        exact acc_step d L fl tab (wL L).val (2 * t1.val) (2 * k.val) 0 _ hRA ⟨43, by decide⟩ ⟨3, by decide⟩ 48#32 rfl _ hwA_43 _ (k1_off20_form ⟨2, by decide⟩ _ _) _ _
      have aA3_45 : pair0_region.sl.v2131_8 d L tab k r g1 g2 hR hin = AccMath.accVec (rowF fl tab (wL L).val (2 * t1.val) (2 * k.val)) (offF fl (wL L).val (2 * t1.val) (2 * k.val)) 3 45 := by
        unfold pair0_region.sl.v2131_8; rw [aA3_44]
        exact acc_step d L fl tab (wL L).val (2 * t1.val) (2 * k.val) 0 _ hRA ⟨44, by decide⟩ ⟨3, by decide⟩ 48#32 rfl _ hwA_44 _ (k1_off21_form ⟨2, by decide⟩ _ _) _ _
      have aA3_46 : pair0_region.sl.v2167_8 d L tab k r g1 g2 hR hin = AccMath.accVec (rowF fl tab (wL L).val (2 * t1.val) (2 * k.val)) (offF fl (wL L).val (2 * t1.val) (2 * k.val)) 3 46 := by
        unfold pair0_region.sl.v2167_8; rw [aA3_45]
        exact acc_step d L fl tab (wL L).val (2 * t1.val) (2 * k.val) 0 _ hRA ⟨45, by decide⟩ ⟨3, by decide⟩ 48#32 rfl _ hwA_45 _ (k1_off22_form ⟨2, by decide⟩ _ _) _ _
      have aA3_47 : pair0_region.sl.v2203_8 d L tab k r g1 g2 hR hin = AccMath.accVec (rowF fl tab (wL L).val (2 * t1.val) (2 * k.val)) (offF fl (wL L).val (2 * t1.val) (2 * k.val)) 3 47 := by
        unfold pair0_region.sl.v2203_8; rw [aA3_46]
        exact acc_step d L fl tab (wL L).val (2 * t1.val) (2 * k.val) 0 _ hRA ⟨46, by decide⟩ ⟨3, by decide⟩ 48#32 rfl _ hwA_46 _ (k1_off23_form ⟨2, by decide⟩ _ _) _ _
      have aA3_48 : pair0_region.sl.v2239_8 d L tab k r g1 g2 hR hin = AccMath.accVec (rowF fl tab (wL L).val (2 * t1.val) (2 * k.val)) (offF fl (wL L).val (2 * t1.val) (2 * k.val)) 3 48 := by
        unfold pair0_region.sl.v2239_8; rw [aA3_47]
        exact acc_step d L fl tab (wL L).val (2 * t1.val) (2 * k.val) 0 _ hRA ⟨47, by decide⟩ ⟨3, by decide⟩ 48#32 rfl _ hwA_47 _ (k1_off24_form ⟨2, by decide⟩ _ _) _ _
      have aA3_49 : pair0_region.sl.v1488_1 d L tab k r g1 g2 hR hin = AccMath.accVec (rowF fl tab (wL L).val (2 * t1.val) (2 * k.val)) (offF fl (wL L).val (2 * t1.val) (2 * k.val)) 3 49 := by
        unfold pair0_region.sl.v1488_1; rw [aA3_48]
        exact acc_step d L fl tab (wL L).val (2 * t1.val) (2 * k.val) 0 _ hRA ⟨48, by decide⟩ ⟨3, by decide⟩ 48#32 rfl _ hwA_48 _ (k1_off26_form _ _) _ _
      have aA3_50 : pair0_region.sl.v1522_1 d L tab k r g1 g2 hR hin = AccMath.accVec (rowF fl tab (wL L).val (2 * t1.val) (2 * k.val)) (offF fl (wL L).val (2 * t1.val) (2 * k.val)) 3 50 := by
        unfold pair0_region.sl.v1522_1; rw [aA3_49]
        exact acc_step d L fl tab (wL L).val (2 * t1.val) (2 * k.val) 0 _ hRA ⟨49, by decide⟩ ⟨3, by decide⟩ 48#32 rfl _ hwA_49 _ (k1_off27_form _ _) _ _
      have hPA3 : ∀ x : S1x1x16.Idx, pair0_region.sl.v1542_1 d L tab k r g1 g2 hR hin x = Spec.bagPartial fl tab (128 * (wL L).val + 16 * (2 * t1.val) + (2 * k.val)) (16 * 3 + (x 2).val) 50 := fun x => by
        unfold pair0_region.sl.v1542_1; rw [aA3_50]; exact payload_ok fl tab (wL L).val (2 * t1.val) (2 * k.val) ⟨3, by decide⟩ _ x
      have hwB_0 : pair0_region.sl.v1667_9 d L k g2 = Spec.tcol (blkWord fl (wL L).val (2 * t1.val) (64 * (2 * k.val + 1) + 0)) :=
        (rv_extract d L g2 _ _ _ 0 (by decide) _ _).trans (rv_word d L fl (wL L).val (2 * t1.val) 0 (2 * k.val + 1) 0 (by decide) (by omega) (by decide) g2 hV0 _
          (by rw [k1_off35_eq k ⟨0, by decide⟩]; show 128 * k.val + 16 * 0 + 64 + 0 = 1024 * 0 + 64 * (2 * k.val + 1) + 0; omega) _)
      have hwB_1 : pair0_region.sl.v1703_9 d L k g2 = Spec.tcol (blkWord fl (wL L).val (2 * t1.val) (64 * (2 * k.val + 1) + 1)) :=
        (rv_extract d L g2 _ _ _ 1 (by decide) _ _).trans (rv_word d L fl (wL L).val (2 * t1.val) 0 (2 * k.val + 1) 1 (by decide) (by omega) (by decide) g2 hV0 _
          (by rw [k1_off35_eq k ⟨0, by decide⟩]; show 128 * k.val + 16 * 0 + 64 + 1 = 1024 * 0 + 64 * (2 * k.val + 1) + 1; omega) _)
      have hwB_2 : pair0_region.sl.v1739_9 d L k g2 = Spec.tcol (blkWord fl (wL L).val (2 * t1.val) (64 * (2 * k.val + 1) + 2)) :=
        (rv_extract d L g2 _ _ _ 2 (by decide) _ _).trans (rv_word d L fl (wL L).val (2 * t1.val) 0 (2 * k.val + 1) 2 (by decide) (by omega) (by decide) g2 hV0 _
          (by rw [k1_off35_eq k ⟨0, by decide⟩]; show 128 * k.val + 16 * 0 + 64 + 2 = 1024 * 0 + 64 * (2 * k.val + 1) + 2; omega) _)
      have hwB_3 : pair0_region.sl.v1775_9 d L k g2 = Spec.tcol (blkWord fl (wL L).val (2 * t1.val) (64 * (2 * k.val + 1) + 3)) :=
        (rv_extract d L g2 _ _ _ 3 (by decide) _ _).trans (rv_word d L fl (wL L).val (2 * t1.val) 0 (2 * k.val + 1) 3 (by decide) (by omega) (by decide) g2 hV0 _
          (by rw [k1_off35_eq k ⟨0, by decide⟩]; show 128 * k.val + 16 * 0 + 64 + 3 = 1024 * 0 + 64 * (2 * k.val + 1) + 3; omega) _)
      have hwB_4 : pair0_region.sl.v1811_9 d L k g2 = Spec.tcol (blkWord fl (wL L).val (2 * t1.val) (64 * (2 * k.val + 1) + 4)) :=
        (rv_extract d L g2 _ _ _ 4 (by decide) _ _).trans (rv_word d L fl (wL L).val (2 * t1.val) 0 (2 * k.val + 1) 4 (by decide) (by omega) (by decide) g2 hV0 _
          (by rw [k1_off35_eq k ⟨0, by decide⟩]; show 128 * k.val + 16 * 0 + 64 + 4 = 1024 * 0 + 64 * (2 * k.val + 1) + 4; omega) _)
      have hwB_5 : pair0_region.sl.v1847_9 d L k g2 = Spec.tcol (blkWord fl (wL L).val (2 * t1.val) (64 * (2 * k.val + 1) + 5)) :=
        (rv_extract d L g2 _ _ _ 5 (by decide) _ _).trans (rv_word d L fl (wL L).val (2 * t1.val) 0 (2 * k.val + 1) 5 (by decide) (by omega) (by decide) g2 hV0 _
          (by rw [k1_off35_eq k ⟨0, by decide⟩]; show 128 * k.val + 16 * 0 + 64 + 5 = 1024 * 0 + 64 * (2 * k.val + 1) + 5; omega) _)
      have hwB_6 : pair0_region.sl.v1883_9 d L k g2 = Spec.tcol (blkWord fl (wL L).val (2 * t1.val) (64 * (2 * k.val + 1) + 6)) :=
        (rv_extract d L g2 _ _ _ 6 (by decide) _ _).trans (rv_word d L fl (wL L).val (2 * t1.val) 0 (2 * k.val + 1) 6 (by decide) (by omega) (by decide) g2 hV0 _
          (by rw [k1_off35_eq k ⟨0, by decide⟩]; show 128 * k.val + 16 * 0 + 64 + 6 = 1024 * 0 + 64 * (2 * k.val + 1) + 6; omega) _)
      have hwB_7 : pair0_region.sl.v1919_9 d L k g2 = Spec.tcol (blkWord fl (wL L).val (2 * t1.val) (64 * (2 * k.val + 1) + 7)) :=
        (rv_extract d L g2 _ _ _ 7 (by decide) _ _).trans (rv_word d L fl (wL L).val (2 * t1.val) 0 (2 * k.val + 1) 7 (by decide) (by omega) (by decide) g2 hV0 _
          (by rw [k1_off35_eq k ⟨0, by decide⟩]; show 128 * k.val + 16 * 0 + 64 + 7 = 1024 * 0 + 64 * (2 * k.val + 1) + 7; omega) _)
      have hwB_8 : pair0_region.sl.v1955_9 d L k g2 = Spec.tcol (blkWord fl (wL L).val (2 * t1.val) (64 * (2 * k.val + 1) + 8)) :=
        (rv_extract d L g2 _ _ _ 8 (by decide) _ _).trans (rv_word d L fl (wL L).val (2 * t1.val) 0 (2 * k.val + 1) 8 (by decide) (by omega) (by decide) g2 hV0 _
          (by rw [k1_off35_eq k ⟨0, by decide⟩]; show 128 * k.val + 16 * 0 + 64 + 8 = 1024 * 0 + 64 * (2 * k.val + 1) + 8; omega) _)
      have hwB_9 : pair0_region.sl.v1991_9 d L k g2 = Spec.tcol (blkWord fl (wL L).val (2 * t1.val) (64 * (2 * k.val + 1) + 9)) :=
        (rv_extract d L g2 _ _ _ 9 (by decide) _ _).trans (rv_word d L fl (wL L).val (2 * t1.val) 0 (2 * k.val + 1) 9 (by decide) (by omega) (by decide) g2 hV0 _
          (by rw [k1_off35_eq k ⟨0, by decide⟩]; show 128 * k.val + 16 * 0 + 64 + 9 = 1024 * 0 + 64 * (2 * k.val + 1) + 9; omega) _)
      have hwB_10 : pair0_region.sl.v2027_9 d L k g2 = Spec.tcol (blkWord fl (wL L).val (2 * t1.val) (64 * (2 * k.val + 1) + 10)) :=
        (rv_extract d L g2 _ _ _ 10 (by decide) _ _).trans (rv_word d L fl (wL L).val (2 * t1.val) 0 (2 * k.val + 1) 10 (by decide) (by omega) (by decide) g2 hV0 _
          (by rw [k1_off35_eq k ⟨0, by decide⟩]; show 128 * k.val + 16 * 0 + 64 + 10 = 1024 * 0 + 64 * (2 * k.val + 1) + 10; omega) _)
      have hwB_11 : pair0_region.sl.v2063_9 d L k g2 = Spec.tcol (blkWord fl (wL L).val (2 * t1.val) (64 * (2 * k.val + 1) + 11)) :=
        (rv_extract d L g2 _ _ _ 11 (by decide) _ _).trans (rv_word d L fl (wL L).val (2 * t1.val) 0 (2 * k.val + 1) 11 (by decide) (by omega) (by decide) g2 hV0 _
          (by rw [k1_off35_eq k ⟨0, by decide⟩]; show 128 * k.val + 16 * 0 + 64 + 11 = 1024 * 0 + 64 * (2 * k.val + 1) + 11; omega) _)
      have hwB_12 : pair0_region.sl.v2099_9 d L k g2 = Spec.tcol (blkWord fl (wL L).val (2 * t1.val) (64 * (2 * k.val + 1) + 12)) :=
        (rv_extract d L g2 _ _ _ 12 (by decide) _ _).trans (rv_word d L fl (wL L).val (2 * t1.val) 0 (2 * k.val + 1) 12 (by decide) (by omega) (by decide) g2 hV0 _
          (by rw [k1_off35_eq k ⟨0, by decide⟩]; show 128 * k.val + 16 * 0 + 64 + 12 = 1024 * 0 + 64 * (2 * k.val + 1) + 12; omega) _)
      have hwB_13 : pair0_region.sl.v2135_9 d L k g2 = Spec.tcol (blkWord fl (wL L).val (2 * t1.val) (64 * (2 * k.val + 1) + 13)) :=
        (rv_extract d L g2 _ _ _ 13 (by decide) _ _).trans (rv_word d L fl (wL L).val (2 * t1.val) 0 (2 * k.val + 1) 13 (by decide) (by omega) (by decide) g2 hV0 _
          (by rw [k1_off35_eq k ⟨0, by decide⟩]; show 128 * k.val + 16 * 0 + 64 + 13 = 1024 * 0 + 64 * (2 * k.val + 1) + 13; omega) _)
      have hwB_14 : pair0_region.sl.v2171_9 d L k g2 = Spec.tcol (blkWord fl (wL L).val (2 * t1.val) (64 * (2 * k.val + 1) + 14)) :=
        (rv_extract d L g2 _ _ _ 14 (by decide) _ _).trans (rv_word d L fl (wL L).val (2 * t1.val) 0 (2 * k.val + 1) 14 (by decide) (by omega) (by decide) g2 hV0 _
          (by rw [k1_off35_eq k ⟨0, by decide⟩]; show 128 * k.val + 16 * 0 + 64 + 14 = 1024 * 0 + 64 * (2 * k.val + 1) + 14; omega) _)
      have hwB_15 : pair0_region.sl.v2207_9 d L k g2 = Spec.tcol (blkWord fl (wL L).val (2 * t1.val) (64 * (2 * k.val + 1) + 15)) :=
        (rv_extract d L g2 _ _ _ 15 (by decide) _ _).trans (rv_word d L fl (wL L).val (2 * t1.val) 0 (2 * k.val + 1) 15 (by decide) (by omega) (by decide) g2 hV0 _
          (by rw [k1_off35_eq k ⟨0, by decide⟩]; show 128 * k.val + 16 * 0 + 64 + 15 = 1024 * 0 + 64 * (2 * k.val + 1) + 15; omega) _)
      have hwB_16 : pair0_region.sl.v1667_10 d L k g2 = Spec.tcol (blkWord fl (wL L).val (2 * t1.val) (64 * (2 * k.val + 1) + 16)) :=
        (rv_extract d L g2 _ _ _ 0 (by decide) _ _).trans (rv_word d L fl (wL L).val (2 * t1.val) 0 (2 * k.val + 1) 16 (by decide) (by omega) (by decide) g2 hV0 _
          (by rw [k1_off35_eq k ⟨1, by decide⟩]; show 128 * k.val + 16 * 1 + 64 + 0 = 1024 * 0 + 64 * (2 * k.val + 1) + 16; omega) _)
      have hwB_17 : pair0_region.sl.v1703_10 d L k g2 = Spec.tcol (blkWord fl (wL L).val (2 * t1.val) (64 * (2 * k.val + 1) + 17)) :=
        (rv_extract d L g2 _ _ _ 1 (by decide) _ _).trans (rv_word d L fl (wL L).val (2 * t1.val) 0 (2 * k.val + 1) 17 (by decide) (by omega) (by decide) g2 hV0 _
          (by rw [k1_off35_eq k ⟨1, by decide⟩]; show 128 * k.val + 16 * 1 + 64 + 1 = 1024 * 0 + 64 * (2 * k.val + 1) + 17; omega) _)
      have hwB_18 : pair0_region.sl.v1739_10 d L k g2 = Spec.tcol (blkWord fl (wL L).val (2 * t1.val) (64 * (2 * k.val + 1) + 18)) :=
        (rv_extract d L g2 _ _ _ 2 (by decide) _ _).trans (rv_word d L fl (wL L).val (2 * t1.val) 0 (2 * k.val + 1) 18 (by decide) (by omega) (by decide) g2 hV0 _
          (by rw [k1_off35_eq k ⟨1, by decide⟩]; show 128 * k.val + 16 * 1 + 64 + 2 = 1024 * 0 + 64 * (2 * k.val + 1) + 18; omega) _)
      have hwB_19 : pair0_region.sl.v1775_10 d L k g2 = Spec.tcol (blkWord fl (wL L).val (2 * t1.val) (64 * (2 * k.val + 1) + 19)) :=
        (rv_extract d L g2 _ _ _ 3 (by decide) _ _).trans (rv_word d L fl (wL L).val (2 * t1.val) 0 (2 * k.val + 1) 19 (by decide) (by omega) (by decide) g2 hV0 _
          (by rw [k1_off35_eq k ⟨1, by decide⟩]; show 128 * k.val + 16 * 1 + 64 + 3 = 1024 * 0 + 64 * (2 * k.val + 1) + 19; omega) _)
      have hwB_20 : pair0_region.sl.v1811_10 d L k g2 = Spec.tcol (blkWord fl (wL L).val (2 * t1.val) (64 * (2 * k.val + 1) + 20)) :=
        (rv_extract d L g2 _ _ _ 4 (by decide) _ _).trans (rv_word d L fl (wL L).val (2 * t1.val) 0 (2 * k.val + 1) 20 (by decide) (by omega) (by decide) g2 hV0 _
          (by rw [k1_off35_eq k ⟨1, by decide⟩]; show 128 * k.val + 16 * 1 + 64 + 4 = 1024 * 0 + 64 * (2 * k.val + 1) + 20; omega) _)
      have hwB_21 : pair0_region.sl.v1847_10 d L k g2 = Spec.tcol (blkWord fl (wL L).val (2 * t1.val) (64 * (2 * k.val + 1) + 21)) :=
        (rv_extract d L g2 _ _ _ 5 (by decide) _ _).trans (rv_word d L fl (wL L).val (2 * t1.val) 0 (2 * k.val + 1) 21 (by decide) (by omega) (by decide) g2 hV0 _
          (by rw [k1_off35_eq k ⟨1, by decide⟩]; show 128 * k.val + 16 * 1 + 64 + 5 = 1024 * 0 + 64 * (2 * k.val + 1) + 21; omega) _)
      have hwB_22 : pair0_region.sl.v1883_10 d L k g2 = Spec.tcol (blkWord fl (wL L).val (2 * t1.val) (64 * (2 * k.val + 1) + 22)) :=
        (rv_extract d L g2 _ _ _ 6 (by decide) _ _).trans (rv_word d L fl (wL L).val (2 * t1.val) 0 (2 * k.val + 1) 22 (by decide) (by omega) (by decide) g2 hV0 _
          (by rw [k1_off35_eq k ⟨1, by decide⟩]; show 128 * k.val + 16 * 1 + 64 + 6 = 1024 * 0 + 64 * (2 * k.val + 1) + 22; omega) _)
      have hwB_23 : pair0_region.sl.v1919_10 d L k g2 = Spec.tcol (blkWord fl (wL L).val (2 * t1.val) (64 * (2 * k.val + 1) + 23)) :=
        (rv_extract d L g2 _ _ _ 7 (by decide) _ _).trans (rv_word d L fl (wL L).val (2 * t1.val) 0 (2 * k.val + 1) 23 (by decide) (by omega) (by decide) g2 hV0 _
          (by rw [k1_off35_eq k ⟨1, by decide⟩]; show 128 * k.val + 16 * 1 + 64 + 7 = 1024 * 0 + 64 * (2 * k.val + 1) + 23; omega) _)
      have hwB_24 : pair0_region.sl.v1955_10 d L k g2 = Spec.tcol (blkWord fl (wL L).val (2 * t1.val) (64 * (2 * k.val + 1) + 24)) :=
        (rv_extract d L g2 _ _ _ 8 (by decide) _ _).trans (rv_word d L fl (wL L).val (2 * t1.val) 0 (2 * k.val + 1) 24 (by decide) (by omega) (by decide) g2 hV0 _
          (by rw [k1_off35_eq k ⟨1, by decide⟩]; show 128 * k.val + 16 * 1 + 64 + 8 = 1024 * 0 + 64 * (2 * k.val + 1) + 24; omega) _)
      have hwB_25 : pair0_region.sl.v1991_10 d L k g2 = Spec.tcol (blkWord fl (wL L).val (2 * t1.val) (64 * (2 * k.val + 1) + 25)) :=
        (rv_extract d L g2 _ _ _ 9 (by decide) _ _).trans (rv_word d L fl (wL L).val (2 * t1.val) 0 (2 * k.val + 1) 25 (by decide) (by omega) (by decide) g2 hV0 _
          (by rw [k1_off35_eq k ⟨1, by decide⟩]; show 128 * k.val + 16 * 1 + 64 + 9 = 1024 * 0 + 64 * (2 * k.val + 1) + 25; omega) _)
      have hwB_26 : pair0_region.sl.v2027_10 d L k g2 = Spec.tcol (blkWord fl (wL L).val (2 * t1.val) (64 * (2 * k.val + 1) + 26)) :=
        (rv_extract d L g2 _ _ _ 10 (by decide) _ _).trans (rv_word d L fl (wL L).val (2 * t1.val) 0 (2 * k.val + 1) 26 (by decide) (by omega) (by decide) g2 hV0 _
          (by rw [k1_off35_eq k ⟨1, by decide⟩]; show 128 * k.val + 16 * 1 + 64 + 10 = 1024 * 0 + 64 * (2 * k.val + 1) + 26; omega) _)
      have hwB_27 : pair0_region.sl.v2063_10 d L k g2 = Spec.tcol (blkWord fl (wL L).val (2 * t1.val) (64 * (2 * k.val + 1) + 27)) :=
        (rv_extract d L g2 _ _ _ 11 (by decide) _ _).trans (rv_word d L fl (wL L).val (2 * t1.val) 0 (2 * k.val + 1) 27 (by decide) (by omega) (by decide) g2 hV0 _
          (by rw [k1_off35_eq k ⟨1, by decide⟩]; show 128 * k.val + 16 * 1 + 64 + 11 = 1024 * 0 + 64 * (2 * k.val + 1) + 27; omega) _)
      have hwB_28 : pair0_region.sl.v2099_10 d L k g2 = Spec.tcol (blkWord fl (wL L).val (2 * t1.val) (64 * (2 * k.val + 1) + 28)) :=
        (rv_extract d L g2 _ _ _ 12 (by decide) _ _).trans (rv_word d L fl (wL L).val (2 * t1.val) 0 (2 * k.val + 1) 28 (by decide) (by omega) (by decide) g2 hV0 _
          (by rw [k1_off35_eq k ⟨1, by decide⟩]; show 128 * k.val + 16 * 1 + 64 + 12 = 1024 * 0 + 64 * (2 * k.val + 1) + 28; omega) _)
      have hwB_29 : pair0_region.sl.v2135_10 d L k g2 = Spec.tcol (blkWord fl (wL L).val (2 * t1.val) (64 * (2 * k.val + 1) + 29)) :=
        (rv_extract d L g2 _ _ _ 13 (by decide) _ _).trans (rv_word d L fl (wL L).val (2 * t1.val) 0 (2 * k.val + 1) 29 (by decide) (by omega) (by decide) g2 hV0 _
          (by rw [k1_off35_eq k ⟨1, by decide⟩]; show 128 * k.val + 16 * 1 + 64 + 13 = 1024 * 0 + 64 * (2 * k.val + 1) + 29; omega) _)
      have hwB_30 : pair0_region.sl.v2171_10 d L k g2 = Spec.tcol (blkWord fl (wL L).val (2 * t1.val) (64 * (2 * k.val + 1) + 30)) :=
        (rv_extract d L g2 _ _ _ 14 (by decide) _ _).trans (rv_word d L fl (wL L).val (2 * t1.val) 0 (2 * k.val + 1) 30 (by decide) (by omega) (by decide) g2 hV0 _
          (by rw [k1_off35_eq k ⟨1, by decide⟩]; show 128 * k.val + 16 * 1 + 64 + 14 = 1024 * 0 + 64 * (2 * k.val + 1) + 30; omega) _)
      have hwB_31 : pair0_region.sl.v2207_10 d L k g2 = Spec.tcol (blkWord fl (wL L).val (2 * t1.val) (64 * (2 * k.val + 1) + 31)) :=
        (rv_extract d L g2 _ _ _ 15 (by decide) _ _).trans (rv_word d L fl (wL L).val (2 * t1.val) 0 (2 * k.val + 1) 31 (by decide) (by omega) (by decide) g2 hV0 _
          (by rw [k1_off35_eq k ⟨1, by decide⟩]; show 128 * k.val + 16 * 1 + 64 + 15 = 1024 * 0 + 64 * (2 * k.val + 1) + 31; omega) _)
      have hwB_32 : pair0_region.sl.v1667_11 d L k g2 = Spec.tcol (blkWord fl (wL L).val (2 * t1.val) (64 * (2 * k.val + 1) + 32)) :=
        (rv_extract d L g2 _ _ _ 0 (by decide) _ _).trans (rv_word d L fl (wL L).val (2 * t1.val) 0 (2 * k.val + 1) 32 (by decide) (by omega) (by decide) g2 hV0 _
          (by rw [k1_off35_eq k ⟨2, by decide⟩]; show 128 * k.val + 16 * 2 + 64 + 0 = 1024 * 0 + 64 * (2 * k.val + 1) + 32; omega) _)
      have hwB_33 : pair0_region.sl.v1703_11 d L k g2 = Spec.tcol (blkWord fl (wL L).val (2 * t1.val) (64 * (2 * k.val + 1) + 33)) :=
        (rv_extract d L g2 _ _ _ 1 (by decide) _ _).trans (rv_word d L fl (wL L).val (2 * t1.val) 0 (2 * k.val + 1) 33 (by decide) (by omega) (by decide) g2 hV0 _
          (by rw [k1_off35_eq k ⟨2, by decide⟩]; show 128 * k.val + 16 * 2 + 64 + 1 = 1024 * 0 + 64 * (2 * k.val + 1) + 33; omega) _)
      have hwB_34 : pair0_region.sl.v1739_11 d L k g2 = Spec.tcol (blkWord fl (wL L).val (2 * t1.val) (64 * (2 * k.val + 1) + 34)) :=
        (rv_extract d L g2 _ _ _ 2 (by decide) _ _).trans (rv_word d L fl (wL L).val (2 * t1.val) 0 (2 * k.val + 1) 34 (by decide) (by omega) (by decide) g2 hV0 _
          (by rw [k1_off35_eq k ⟨2, by decide⟩]; show 128 * k.val + 16 * 2 + 64 + 2 = 1024 * 0 + 64 * (2 * k.val + 1) + 34; omega) _)
      have hwB_35 : pair0_region.sl.v1775_11 d L k g2 = Spec.tcol (blkWord fl (wL L).val (2 * t1.val) (64 * (2 * k.val + 1) + 35)) :=
        (rv_extract d L g2 _ _ _ 3 (by decide) _ _).trans (rv_word d L fl (wL L).val (2 * t1.val) 0 (2 * k.val + 1) 35 (by decide) (by omega) (by decide) g2 hV0 _
          (by rw [k1_off35_eq k ⟨2, by decide⟩]; show 128 * k.val + 16 * 2 + 64 + 3 = 1024 * 0 + 64 * (2 * k.val + 1) + 35; omega) _)
      have hwB_36 : pair0_region.sl.v1811_11 d L k g2 = Spec.tcol (blkWord fl (wL L).val (2 * t1.val) (64 * (2 * k.val + 1) + 36)) :=
        (rv_extract d L g2 _ _ _ 4 (by decide) _ _).trans (rv_word d L fl (wL L).val (2 * t1.val) 0 (2 * k.val + 1) 36 (by decide) (by omega) (by decide) g2 hV0 _
          (by rw [k1_off35_eq k ⟨2, by decide⟩]; show 128 * k.val + 16 * 2 + 64 + 4 = 1024 * 0 + 64 * (2 * k.val + 1) + 36; omega) _)
      have hwB_37 : pair0_region.sl.v1847_11 d L k g2 = Spec.tcol (blkWord fl (wL L).val (2 * t1.val) (64 * (2 * k.val + 1) + 37)) :=
        (rv_extract d L g2 _ _ _ 5 (by decide) _ _).trans (rv_word d L fl (wL L).val (2 * t1.val) 0 (2 * k.val + 1) 37 (by decide) (by omega) (by decide) g2 hV0 _
          (by rw [k1_off35_eq k ⟨2, by decide⟩]; show 128 * k.val + 16 * 2 + 64 + 5 = 1024 * 0 + 64 * (2 * k.val + 1) + 37; omega) _)
      have hwB_38 : pair0_region.sl.v1883_11 d L k g2 = Spec.tcol (blkWord fl (wL L).val (2 * t1.val) (64 * (2 * k.val + 1) + 38)) :=
        (rv_extract d L g2 _ _ _ 6 (by decide) _ _).trans (rv_word d L fl (wL L).val (2 * t1.val) 0 (2 * k.val + 1) 38 (by decide) (by omega) (by decide) g2 hV0 _
          (by rw [k1_off35_eq k ⟨2, by decide⟩]; show 128 * k.val + 16 * 2 + 64 + 6 = 1024 * 0 + 64 * (2 * k.val + 1) + 38; omega) _)
      have hwB_39 : pair0_region.sl.v1919_11 d L k g2 = Spec.tcol (blkWord fl (wL L).val (2 * t1.val) (64 * (2 * k.val + 1) + 39)) :=
        (rv_extract d L g2 _ _ _ 7 (by decide) _ _).trans (rv_word d L fl (wL L).val (2 * t1.val) 0 (2 * k.val + 1) 39 (by decide) (by omega) (by decide) g2 hV0 _
          (by rw [k1_off35_eq k ⟨2, by decide⟩]; show 128 * k.val + 16 * 2 + 64 + 7 = 1024 * 0 + 64 * (2 * k.val + 1) + 39; omega) _)
      have hwB_40 : pair0_region.sl.v1955_11 d L k g2 = Spec.tcol (blkWord fl (wL L).val (2 * t1.val) (64 * (2 * k.val + 1) + 40)) :=
        (rv_extract d L g2 _ _ _ 8 (by decide) _ _).trans (rv_word d L fl (wL L).val (2 * t1.val) 0 (2 * k.val + 1) 40 (by decide) (by omega) (by decide) g2 hV0 _
          (by rw [k1_off35_eq k ⟨2, by decide⟩]; show 128 * k.val + 16 * 2 + 64 + 8 = 1024 * 0 + 64 * (2 * k.val + 1) + 40; omega) _)
      have hwB_41 : pair0_region.sl.v1991_11 d L k g2 = Spec.tcol (blkWord fl (wL L).val (2 * t1.val) (64 * (2 * k.val + 1) + 41)) :=
        (rv_extract d L g2 _ _ _ 9 (by decide) _ _).trans (rv_word d L fl (wL L).val (2 * t1.val) 0 (2 * k.val + 1) 41 (by decide) (by omega) (by decide) g2 hV0 _
          (by rw [k1_off35_eq k ⟨2, by decide⟩]; show 128 * k.val + 16 * 2 + 64 + 9 = 1024 * 0 + 64 * (2 * k.val + 1) + 41; omega) _)
      have hwB_42 : pair0_region.sl.v2027_11 d L k g2 = Spec.tcol (blkWord fl (wL L).val (2 * t1.val) (64 * (2 * k.val + 1) + 42)) :=
        (rv_extract d L g2 _ _ _ 10 (by decide) _ _).trans (rv_word d L fl (wL L).val (2 * t1.val) 0 (2 * k.val + 1) 42 (by decide) (by omega) (by decide) g2 hV0 _
          (by rw [k1_off35_eq k ⟨2, by decide⟩]; show 128 * k.val + 16 * 2 + 64 + 10 = 1024 * 0 + 64 * (2 * k.val + 1) + 42; omega) _)
      have hwB_43 : pair0_region.sl.v2063_11 d L k g2 = Spec.tcol (blkWord fl (wL L).val (2 * t1.val) (64 * (2 * k.val + 1) + 43)) :=
        (rv_extract d L g2 _ _ _ 11 (by decide) _ _).trans (rv_word d L fl (wL L).val (2 * t1.val) 0 (2 * k.val + 1) 43 (by decide) (by omega) (by decide) g2 hV0 _
          (by rw [k1_off35_eq k ⟨2, by decide⟩]; show 128 * k.val + 16 * 2 + 64 + 11 = 1024 * 0 + 64 * (2 * k.val + 1) + 43; omega) _)
      have hwB_44 : pair0_region.sl.v2099_11 d L k g2 = Spec.tcol (blkWord fl (wL L).val (2 * t1.val) (64 * (2 * k.val + 1) + 44)) :=
        (rv_extract d L g2 _ _ _ 12 (by decide) _ _).trans (rv_word d L fl (wL L).val (2 * t1.val) 0 (2 * k.val + 1) 44 (by decide) (by omega) (by decide) g2 hV0 _
          (by rw [k1_off35_eq k ⟨2, by decide⟩]; show 128 * k.val + 16 * 2 + 64 + 12 = 1024 * 0 + 64 * (2 * k.val + 1) + 44; omega) _)
      have hwB_45 : pair0_region.sl.v2135_11 d L k g2 = Spec.tcol (blkWord fl (wL L).val (2 * t1.val) (64 * (2 * k.val + 1) + 45)) :=
        (rv_extract d L g2 _ _ _ 13 (by decide) _ _).trans (rv_word d L fl (wL L).val (2 * t1.val) 0 (2 * k.val + 1) 45 (by decide) (by omega) (by decide) g2 hV0 _
          (by rw [k1_off35_eq k ⟨2, by decide⟩]; show 128 * k.val + 16 * 2 + 64 + 13 = 1024 * 0 + 64 * (2 * k.val + 1) + 45; omega) _)
      have hwB_46 : pair0_region.sl.v2171_11 d L k g2 = Spec.tcol (blkWord fl (wL L).val (2 * t1.val) (64 * (2 * k.val + 1) + 46)) :=
        (rv_extract d L g2 _ _ _ 14 (by decide) _ _).trans (rv_word d L fl (wL L).val (2 * t1.val) 0 (2 * k.val + 1) 46 (by decide) (by omega) (by decide) g2 hV0 _
          (by rw [k1_off35_eq k ⟨2, by decide⟩]; show 128 * k.val + 16 * 2 + 64 + 14 = 1024 * 0 + 64 * (2 * k.val + 1) + 46; omega) _)
      have hwB_47 : pair0_region.sl.v2207_11 d L k g2 = Spec.tcol (blkWord fl (wL L).val (2 * t1.val) (64 * (2 * k.val + 1) + 47)) :=
        (rv_extract d L g2 _ _ _ 15 (by decide) _ _).trans (rv_word d L fl (wL L).val (2 * t1.val) 0 (2 * k.val + 1) 47 (by decide) (by omega) (by decide) g2 hV0 _
          (by rw [k1_off35_eq k ⟨2, by decide⟩]; show 128 * k.val + 16 * 2 + 64 + 15 = 1024 * 0 + 64 * (2 * k.val + 1) + 47; omega) _)
      have hwB_48 : pair0_region.sl.v1572_1 d L k g2 = Spec.tcol (blkWord fl (wL L).val (2 * t1.val) (64 * (2 * k.val + 1) + 48)) :=
        (rv_extract d L g2 _ _ _ 0 (by decide) _ _).trans (rv_word d L fl (wL L).val (2 * t1.val) 0 (2 * k.val + 1) 48 (by decide) (by omega) (by decide) g2 hV0 _
          (by rw [k1_off52_eq k]; show 128 * k.val + 112 + 0 = 1024 * 0 + 64 * (2 * k.val + 1) + 48; omega) _)
      have hwB_49 : pair0_region.sl.v1606_1 d L k g2 = Spec.tcol (blkWord fl (wL L).val (2 * t1.val) (64 * (2 * k.val + 1) + 49)) :=
        (rv_extract d L g2 _ _ _ 1 (by decide) _ _).trans (rv_word d L fl (wL L).val (2 * t1.val) 0 (2 * k.val + 1) 49 (by decide) (by omega) (by decide) g2 hV0 _
          (by rw [k1_off52_eq k]; show 128 * k.val + 112 + 1 = 1024 * 0 + 64 * (2 * k.val + 1) + 49; omega) _)
      have aB0_0 : pair0_region.sl.v1561_1 = AccMath.accVec (rowF fl tab (wL L).val (2 * t1.val) (2 * k.val + 1)) (offF fl (wL L).val (2 * t1.val) (2 * k.val + 1)) 0 0 := acc_zero fl tab (wL L).val (2 * t1.val) (2 * k.val + 1) 0
      have aB0_1 : pair0_region.sl.v1675_9 d L tab t1 k r g1 g2 hR hin h5 = AccMath.accVec (rowF fl tab (wL L).val (2 * t1.val) (2 * k.val + 1)) (offF fl (wL L).val (2 * t1.val) (2 * k.val + 1)) 0 1 := by
        unfold pair0_region.sl.v1675_9; rw [aB0_0]
        exact acc_step d L fl tab (wL L).val (2 * t1.val) (2 * k.val + 1) 1 _ hRB ⟨0, by decide⟩ ⟨0, by decide⟩ 0#32 rfl _ hwB_0 _ (k1_off36_form ⟨0, by decide⟩ _ _) _ _
      have aB0_2 : pair0_region.sl.v1711_9 d L tab t1 k r g1 g2 hR hin h5 = AccMath.accVec (rowF fl tab (wL L).val (2 * t1.val) (2 * k.val + 1)) (offF fl (wL L).val (2 * t1.val) (2 * k.val + 1)) 0 2 := by
        unfold pair0_region.sl.v1711_9; rw [aB0_1]
        exact acc_step d L fl tab (wL L).val (2 * t1.val) (2 * k.val + 1) 1 _ hRB ⟨1, by decide⟩ ⟨0, by decide⟩ 0#32 rfl _ hwB_1 _ (k1_off37_form ⟨0, by decide⟩ _ _) _ _
      have aB0_3 : pair0_region.sl.v1747_9 d L tab t1 k r g1 g2 hR hin h5 = AccMath.accVec (rowF fl tab (wL L).val (2 * t1.val) (2 * k.val + 1)) (offF fl (wL L).val (2 * t1.val) (2 * k.val + 1)) 0 3 := by
        unfold pair0_region.sl.v1747_9; rw [aB0_2]
        exact acc_step d L fl tab (wL L).val (2 * t1.val) (2 * k.val + 1) 1 _ hRB ⟨2, by decide⟩ ⟨0, by decide⟩ 0#32 rfl _ hwB_2 _ (k1_off38_form ⟨0, by decide⟩ _ _) _ _
      have aB0_4 : pair0_region.sl.v1783_9 d L tab t1 k r g1 g2 hR hin h5 = AccMath.accVec (rowF fl tab (wL L).val (2 * t1.val) (2 * k.val + 1)) (offF fl (wL L).val (2 * t1.val) (2 * k.val + 1)) 0 4 := by
        unfold pair0_region.sl.v1783_9; rw [aB0_3]
        exact acc_step d L fl tab (wL L).val (2 * t1.val) (2 * k.val + 1) 1 _ hRB ⟨3, by decide⟩ ⟨0, by decide⟩ 0#32 rfl _ hwB_3 _ (k1_off39_form ⟨0, by decide⟩ _ _) _ _
      have aB0_5 : pair0_region.sl.v1819_9 d L tab t1 k r g1 g2 hR hin h5 = AccMath.accVec (rowF fl tab (wL L).val (2 * t1.val) (2 * k.val + 1)) (offF fl (wL L).val (2 * t1.val) (2 * k.val + 1)) 0 5 := by
        unfold pair0_region.sl.v1819_9; rw [aB0_4]
        exact acc_step d L fl tab (wL L).val (2 * t1.val) (2 * k.val + 1) 1 _ hRB ⟨4, by decide⟩ ⟨0, by decide⟩ 0#32 rfl _ hwB_4 _ (k1_off40_form ⟨0, by decide⟩ _ _) _ _
      have aB0_6 : pair0_region.sl.v1855_9 d L tab t1 k r g1 g2 hR hin h5 = AccMath.accVec (rowF fl tab (wL L).val (2 * t1.val) (2 * k.val + 1)) (offF fl (wL L).val (2 * t1.val) (2 * k.val + 1)) 0 6 := by
        unfold pair0_region.sl.v1855_9; rw [aB0_5]
        exact acc_step d L fl tab (wL L).val (2 * t1.val) (2 * k.val + 1) 1 _ hRB ⟨5, by decide⟩ ⟨0, by decide⟩ 0#32 rfl _ hwB_5 _ (k1_off41_form ⟨0, by decide⟩ _ _) _ _
      have aB0_7 : pair0_region.sl.v1891_9 d L tab t1 k r g1 g2 hR hin h5 = AccMath.accVec (rowF fl tab (wL L).val (2 * t1.val) (2 * k.val + 1)) (offF fl (wL L).val (2 * t1.val) (2 * k.val + 1)) 0 7 := by
        unfold pair0_region.sl.v1891_9; rw [aB0_6]
        exact acc_step d L fl tab (wL L).val (2 * t1.val) (2 * k.val + 1) 1 _ hRB ⟨6, by decide⟩ ⟨0, by decide⟩ 0#32 rfl _ hwB_6 _ (k1_off42_form ⟨0, by decide⟩ _ _) _ _
      have aB0_8 : pair0_region.sl.v1927_9 d L tab t1 k r g1 g2 hR hin h5 = AccMath.accVec (rowF fl tab (wL L).val (2 * t1.val) (2 * k.val + 1)) (offF fl (wL L).val (2 * t1.val) (2 * k.val + 1)) 0 8 := by
        unfold pair0_region.sl.v1927_9; rw [aB0_7]
        exact acc_step d L fl tab (wL L).val (2 * t1.val) (2 * k.val + 1) 1 _ hRB ⟨7, by decide⟩ ⟨0, by decide⟩ 0#32 rfl _ hwB_7 _ (k1_off43_form ⟨0, by decide⟩ _ _) _ _
      have aB0_9 : pair0_region.sl.v1963_9 d L tab t1 k r g1 g2 hR hin h5 = AccMath.accVec (rowF fl tab (wL L).val (2 * t1.val) (2 * k.val + 1)) (offF fl (wL L).val (2 * t1.val) (2 * k.val + 1)) 0 9 := by
        unfold pair0_region.sl.v1963_9; rw [aB0_8]
        exact acc_step d L fl tab (wL L).val (2 * t1.val) (2 * k.val + 1) 1 _ hRB ⟨8, by decide⟩ ⟨0, by decide⟩ 0#32 rfl _ hwB_8 _ (k1_off44_form ⟨0, by decide⟩ _ _) _ _
      have aB0_10 : pair0_region.sl.v1999_9 d L tab t1 k r g1 g2 hR hin h5 = AccMath.accVec (rowF fl tab (wL L).val (2 * t1.val) (2 * k.val + 1)) (offF fl (wL L).val (2 * t1.val) (2 * k.val + 1)) 0 10 := by
        unfold pair0_region.sl.v1999_9; rw [aB0_9]
        exact acc_step d L fl tab (wL L).val (2 * t1.val) (2 * k.val + 1) 1 _ hRB ⟨9, by decide⟩ ⟨0, by decide⟩ 0#32 rfl _ hwB_9 _ (k1_off45_form ⟨0, by decide⟩ _ _) _ _
      have aB0_11 : pair0_region.sl.v2035_9 d L tab t1 k r g1 g2 hR hin h5 = AccMath.accVec (rowF fl tab (wL L).val (2 * t1.val) (2 * k.val + 1)) (offF fl (wL L).val (2 * t1.val) (2 * k.val + 1)) 0 11 := by
        unfold pair0_region.sl.v2035_9; rw [aB0_10]
        exact acc_step d L fl tab (wL L).val (2 * t1.val) (2 * k.val + 1) 1 _ hRB ⟨10, by decide⟩ ⟨0, by decide⟩ 0#32 rfl _ hwB_10 _ (k1_off46_form ⟨0, by decide⟩ _ _) _ _
      have aB0_12 : pair0_region.sl.v2071_9 d L tab t1 k r g1 g2 hR hin h5 = AccMath.accVec (rowF fl tab (wL L).val (2 * t1.val) (2 * k.val + 1)) (offF fl (wL L).val (2 * t1.val) (2 * k.val + 1)) 0 12 := by
        unfold pair0_region.sl.v2071_9; rw [aB0_11]
        exact acc_step d L fl tab (wL L).val (2 * t1.val) (2 * k.val + 1) 1 _ hRB ⟨11, by decide⟩ ⟨0, by decide⟩ 0#32 rfl _ hwB_11 _ (k1_off47_form ⟨0, by decide⟩ _ _) _ _
      have aB0_13 : pair0_region.sl.v2107_9 d L tab t1 k r g1 g2 hR hin h5 = AccMath.accVec (rowF fl tab (wL L).val (2 * t1.val) (2 * k.val + 1)) (offF fl (wL L).val (2 * t1.val) (2 * k.val + 1)) 0 13 := by
        unfold pair0_region.sl.v2107_9; rw [aB0_12]
        exact acc_step d L fl tab (wL L).val (2 * t1.val) (2 * k.val + 1) 1 _ hRB ⟨12, by decide⟩ ⟨0, by decide⟩ 0#32 rfl _ hwB_12 _ (k1_off48_form ⟨0, by decide⟩ _ _) _ _
      have aB0_14 : pair0_region.sl.v2143_9 d L tab t1 k r g1 g2 hR hin h5 = AccMath.accVec (rowF fl tab (wL L).val (2 * t1.val) (2 * k.val + 1)) (offF fl (wL L).val (2 * t1.val) (2 * k.val + 1)) 0 14 := by
        unfold pair0_region.sl.v2143_9; rw [aB0_13]
        exact acc_step d L fl tab (wL L).val (2 * t1.val) (2 * k.val + 1) 1 _ hRB ⟨13, by decide⟩ ⟨0, by decide⟩ 0#32 rfl _ hwB_13 _ (k1_off49_form ⟨0, by decide⟩ _ _) _ _
      have aB0_15 : pair0_region.sl.v2179_9 d L tab t1 k r g1 g2 hR hin h5 = AccMath.accVec (rowF fl tab (wL L).val (2 * t1.val) (2 * k.val + 1)) (offF fl (wL L).val (2 * t1.val) (2 * k.val + 1)) 0 15 := by
        unfold pair0_region.sl.v2179_9; rw [aB0_14]
        exact acc_step d L fl tab (wL L).val (2 * t1.val) (2 * k.val + 1) 1 _ hRB ⟨14, by decide⟩ ⟨0, by decide⟩ 0#32 rfl _ hwB_14 _ (k1_off50_form ⟨0, by decide⟩ _ _) _ _
      have aB0_16 : pair0_region.sl.v2215_9 d L tab t1 k r g1 g2 hR hin h5 = AccMath.accVec (rowF fl tab (wL L).val (2 * t1.val) (2 * k.val + 1)) (offF fl (wL L).val (2 * t1.val) (2 * k.val + 1)) 0 16 := by
        unfold pair0_region.sl.v2215_9; rw [aB0_15]
        exact acc_step d L fl tab (wL L).val (2 * t1.val) (2 * k.val + 1) 1 _ hRB ⟨15, by decide⟩ ⟨0, by decide⟩ 0#32 rfl _ hwB_15 _ (k1_off51_form ⟨0, by decide⟩ _ _) _ _
      have aB0_17 : pair0_region.sl.v1675_10 d L tab t1 k r g1 g2 hR hin h5 = AccMath.accVec (rowF fl tab (wL L).val (2 * t1.val) (2 * k.val + 1)) (offF fl (wL L).val (2 * t1.val) (2 * k.val + 1)) 0 17 := by
        unfold pair0_region.sl.v1675_10; rw [aB0_16]
        exact acc_step d L fl tab (wL L).val (2 * t1.val) (2 * k.val + 1) 1 _ hRB ⟨16, by decide⟩ ⟨0, by decide⟩ 0#32 rfl _ hwB_16 _ (k1_off36_form ⟨1, by decide⟩ _ _) _ _
      have aB0_18 : pair0_region.sl.v1711_10 d L tab t1 k r g1 g2 hR hin h5 = AccMath.accVec (rowF fl tab (wL L).val (2 * t1.val) (2 * k.val + 1)) (offF fl (wL L).val (2 * t1.val) (2 * k.val + 1)) 0 18 := by
        unfold pair0_region.sl.v1711_10; rw [aB0_17]
        exact acc_step d L fl tab (wL L).val (2 * t1.val) (2 * k.val + 1) 1 _ hRB ⟨17, by decide⟩ ⟨0, by decide⟩ 0#32 rfl _ hwB_17 _ (k1_off37_form ⟨1, by decide⟩ _ _) _ _
      have aB0_19 : pair0_region.sl.v1747_10 d L tab t1 k r g1 g2 hR hin h5 = AccMath.accVec (rowF fl tab (wL L).val (2 * t1.val) (2 * k.val + 1)) (offF fl (wL L).val (2 * t1.val) (2 * k.val + 1)) 0 19 := by
        unfold pair0_region.sl.v1747_10; rw [aB0_18]
        exact acc_step d L fl tab (wL L).val (2 * t1.val) (2 * k.val + 1) 1 _ hRB ⟨18, by decide⟩ ⟨0, by decide⟩ 0#32 rfl _ hwB_18 _ (k1_off38_form ⟨1, by decide⟩ _ _) _ _
      have aB0_20 : pair0_region.sl.v1783_10 d L tab t1 k r g1 g2 hR hin h5 = AccMath.accVec (rowF fl tab (wL L).val (2 * t1.val) (2 * k.val + 1)) (offF fl (wL L).val (2 * t1.val) (2 * k.val + 1)) 0 20 := by
        unfold pair0_region.sl.v1783_10; rw [aB0_19]
        exact acc_step d L fl tab (wL L).val (2 * t1.val) (2 * k.val + 1) 1 _ hRB ⟨19, by decide⟩ ⟨0, by decide⟩ 0#32 rfl _ hwB_19 _ (k1_off39_form ⟨1, by decide⟩ _ _) _ _
      have aB0_21 : pair0_region.sl.v1819_10 d L tab t1 k r g1 g2 hR hin h5 = AccMath.accVec (rowF fl tab (wL L).val (2 * t1.val) (2 * k.val + 1)) (offF fl (wL L).val (2 * t1.val) (2 * k.val + 1)) 0 21 := by
        unfold pair0_region.sl.v1819_10; rw [aB0_20]
        exact acc_step d L fl tab (wL L).val (2 * t1.val) (2 * k.val + 1) 1 _ hRB ⟨20, by decide⟩ ⟨0, by decide⟩ 0#32 rfl _ hwB_20 _ (k1_off40_form ⟨1, by decide⟩ _ _) _ _
      have aB0_22 : pair0_region.sl.v1855_10 d L tab t1 k r g1 g2 hR hin h5 = AccMath.accVec (rowF fl tab (wL L).val (2 * t1.val) (2 * k.val + 1)) (offF fl (wL L).val (2 * t1.val) (2 * k.val + 1)) 0 22 := by
        unfold pair0_region.sl.v1855_10; rw [aB0_21]
        exact acc_step d L fl tab (wL L).val (2 * t1.val) (2 * k.val + 1) 1 _ hRB ⟨21, by decide⟩ ⟨0, by decide⟩ 0#32 rfl _ hwB_21 _ (k1_off41_form ⟨1, by decide⟩ _ _) _ _
      have aB0_23 : pair0_region.sl.v1891_10 d L tab t1 k r g1 g2 hR hin h5 = AccMath.accVec (rowF fl tab (wL L).val (2 * t1.val) (2 * k.val + 1)) (offF fl (wL L).val (2 * t1.val) (2 * k.val + 1)) 0 23 := by
        unfold pair0_region.sl.v1891_10; rw [aB0_22]
        exact acc_step d L fl tab (wL L).val (2 * t1.val) (2 * k.val + 1) 1 _ hRB ⟨22, by decide⟩ ⟨0, by decide⟩ 0#32 rfl _ hwB_22 _ (k1_off42_form ⟨1, by decide⟩ _ _) _ _
      have aB0_24 : pair0_region.sl.v1927_10 d L tab t1 k r g1 g2 hR hin h5 = AccMath.accVec (rowF fl tab (wL L).val (2 * t1.val) (2 * k.val + 1)) (offF fl (wL L).val (2 * t1.val) (2 * k.val + 1)) 0 24 := by
        unfold pair0_region.sl.v1927_10; rw [aB0_23]
        exact acc_step d L fl tab (wL L).val (2 * t1.val) (2 * k.val + 1) 1 _ hRB ⟨23, by decide⟩ ⟨0, by decide⟩ 0#32 rfl _ hwB_23 _ (k1_off43_form ⟨1, by decide⟩ _ _) _ _
      have aB0_25 : pair0_region.sl.v1963_10 d L tab t1 k r g1 g2 hR hin h5 = AccMath.accVec (rowF fl tab (wL L).val (2 * t1.val) (2 * k.val + 1)) (offF fl (wL L).val (2 * t1.val) (2 * k.val + 1)) 0 25 := by
        unfold pair0_region.sl.v1963_10; rw [aB0_24]
        exact acc_step d L fl tab (wL L).val (2 * t1.val) (2 * k.val + 1) 1 _ hRB ⟨24, by decide⟩ ⟨0, by decide⟩ 0#32 rfl _ hwB_24 _ (k1_off44_form ⟨1, by decide⟩ _ _) _ _
      have aB0_26 : pair0_region.sl.v1999_10 d L tab t1 k r g1 g2 hR hin h5 = AccMath.accVec (rowF fl tab (wL L).val (2 * t1.val) (2 * k.val + 1)) (offF fl (wL L).val (2 * t1.val) (2 * k.val + 1)) 0 26 := by
        unfold pair0_region.sl.v1999_10; rw [aB0_25]
        exact acc_step d L fl tab (wL L).val (2 * t1.val) (2 * k.val + 1) 1 _ hRB ⟨25, by decide⟩ ⟨0, by decide⟩ 0#32 rfl _ hwB_25 _ (k1_off45_form ⟨1, by decide⟩ _ _) _ _
      have aB0_27 : pair0_region.sl.v2035_10 d L tab t1 k r g1 g2 hR hin h5 = AccMath.accVec (rowF fl tab (wL L).val (2 * t1.val) (2 * k.val + 1)) (offF fl (wL L).val (2 * t1.val) (2 * k.val + 1)) 0 27 := by
        unfold pair0_region.sl.v2035_10; rw [aB0_26]
        exact acc_step d L fl tab (wL L).val (2 * t1.val) (2 * k.val + 1) 1 _ hRB ⟨26, by decide⟩ ⟨0, by decide⟩ 0#32 rfl _ hwB_26 _ (k1_off46_form ⟨1, by decide⟩ _ _) _ _
      have aB0_28 : pair0_region.sl.v2071_10 d L tab t1 k r g1 g2 hR hin h5 = AccMath.accVec (rowF fl tab (wL L).val (2 * t1.val) (2 * k.val + 1)) (offF fl (wL L).val (2 * t1.val) (2 * k.val + 1)) 0 28 := by
        unfold pair0_region.sl.v2071_10; rw [aB0_27]
        exact acc_step d L fl tab (wL L).val (2 * t1.val) (2 * k.val + 1) 1 _ hRB ⟨27, by decide⟩ ⟨0, by decide⟩ 0#32 rfl _ hwB_27 _ (k1_off47_form ⟨1, by decide⟩ _ _) _ _
      have aB0_29 : pair0_region.sl.v2107_10 d L tab t1 k r g1 g2 hR hin h5 = AccMath.accVec (rowF fl tab (wL L).val (2 * t1.val) (2 * k.val + 1)) (offF fl (wL L).val (2 * t1.val) (2 * k.val + 1)) 0 29 := by
        unfold pair0_region.sl.v2107_10; rw [aB0_28]
        exact acc_step d L fl tab (wL L).val (2 * t1.val) (2 * k.val + 1) 1 _ hRB ⟨28, by decide⟩ ⟨0, by decide⟩ 0#32 rfl _ hwB_28 _ (k1_off48_form ⟨1, by decide⟩ _ _) _ _
      have aB0_30 : pair0_region.sl.v2143_10 d L tab t1 k r g1 g2 hR hin h5 = AccMath.accVec (rowF fl tab (wL L).val (2 * t1.val) (2 * k.val + 1)) (offF fl (wL L).val (2 * t1.val) (2 * k.val + 1)) 0 30 := by
        unfold pair0_region.sl.v2143_10; rw [aB0_29]
        exact acc_step d L fl tab (wL L).val (2 * t1.val) (2 * k.val + 1) 1 _ hRB ⟨29, by decide⟩ ⟨0, by decide⟩ 0#32 rfl _ hwB_29 _ (k1_off49_form ⟨1, by decide⟩ _ _) _ _
      have aB0_31 : pair0_region.sl.v2179_10 d L tab t1 k r g1 g2 hR hin h5 = AccMath.accVec (rowF fl tab (wL L).val (2 * t1.val) (2 * k.val + 1)) (offF fl (wL L).val (2 * t1.val) (2 * k.val + 1)) 0 31 := by
        unfold pair0_region.sl.v2179_10; rw [aB0_30]
        exact acc_step d L fl tab (wL L).val (2 * t1.val) (2 * k.val + 1) 1 _ hRB ⟨30, by decide⟩ ⟨0, by decide⟩ 0#32 rfl _ hwB_30 _ (k1_off50_form ⟨1, by decide⟩ _ _) _ _
      have aB0_32 : pair0_region.sl.v2215_10 d L tab t1 k r g1 g2 hR hin h5 = AccMath.accVec (rowF fl tab (wL L).val (2 * t1.val) (2 * k.val + 1)) (offF fl (wL L).val (2 * t1.val) (2 * k.val + 1)) 0 32 := by
        unfold pair0_region.sl.v2215_10; rw [aB0_31]
        exact acc_step d L fl tab (wL L).val (2 * t1.val) (2 * k.val + 1) 1 _ hRB ⟨31, by decide⟩ ⟨0, by decide⟩ 0#32 rfl _ hwB_31 _ (k1_off51_form ⟨1, by decide⟩ _ _) _ _
      have aB0_33 : pair0_region.sl.v1675_11 d L tab t1 k r g1 g2 hR hin h5 = AccMath.accVec (rowF fl tab (wL L).val (2 * t1.val) (2 * k.val + 1)) (offF fl (wL L).val (2 * t1.val) (2 * k.val + 1)) 0 33 := by
        unfold pair0_region.sl.v1675_11; rw [aB0_32]
        exact acc_step d L fl tab (wL L).val (2 * t1.val) (2 * k.val + 1) 1 _ hRB ⟨32, by decide⟩ ⟨0, by decide⟩ 0#32 rfl _ hwB_32 _ (k1_off36_form ⟨2, by decide⟩ _ _) _ _
      have aB0_34 : pair0_region.sl.v1711_11 d L tab t1 k r g1 g2 hR hin h5 = AccMath.accVec (rowF fl tab (wL L).val (2 * t1.val) (2 * k.val + 1)) (offF fl (wL L).val (2 * t1.val) (2 * k.val + 1)) 0 34 := by
        unfold pair0_region.sl.v1711_11; rw [aB0_33]
        exact acc_step d L fl tab (wL L).val (2 * t1.val) (2 * k.val + 1) 1 _ hRB ⟨33, by decide⟩ ⟨0, by decide⟩ 0#32 rfl _ hwB_33 _ (k1_off37_form ⟨2, by decide⟩ _ _) _ _
      have aB0_35 : pair0_region.sl.v1747_11 d L tab t1 k r g1 g2 hR hin h5 = AccMath.accVec (rowF fl tab (wL L).val (2 * t1.val) (2 * k.val + 1)) (offF fl (wL L).val (2 * t1.val) (2 * k.val + 1)) 0 35 := by
        unfold pair0_region.sl.v1747_11; rw [aB0_34]
        exact acc_step d L fl tab (wL L).val (2 * t1.val) (2 * k.val + 1) 1 _ hRB ⟨34, by decide⟩ ⟨0, by decide⟩ 0#32 rfl _ hwB_34 _ (k1_off38_form ⟨2, by decide⟩ _ _) _ _
      have aB0_36 : pair0_region.sl.v1783_11 d L tab t1 k r g1 g2 hR hin h5 = AccMath.accVec (rowF fl tab (wL L).val (2 * t1.val) (2 * k.val + 1)) (offF fl (wL L).val (2 * t1.val) (2 * k.val + 1)) 0 36 := by
        unfold pair0_region.sl.v1783_11; rw [aB0_35]
        exact acc_step d L fl tab (wL L).val (2 * t1.val) (2 * k.val + 1) 1 _ hRB ⟨35, by decide⟩ ⟨0, by decide⟩ 0#32 rfl _ hwB_35 _ (k1_off39_form ⟨2, by decide⟩ _ _) _ _
      have aB0_37 : pair0_region.sl.v1819_11 d L tab t1 k r g1 g2 hR hin h5 = AccMath.accVec (rowF fl tab (wL L).val (2 * t1.val) (2 * k.val + 1)) (offF fl (wL L).val (2 * t1.val) (2 * k.val + 1)) 0 37 := by
        unfold pair0_region.sl.v1819_11; rw [aB0_36]
        exact acc_step d L fl tab (wL L).val (2 * t1.val) (2 * k.val + 1) 1 _ hRB ⟨36, by decide⟩ ⟨0, by decide⟩ 0#32 rfl _ hwB_36 _ (k1_off40_form ⟨2, by decide⟩ _ _) _ _
      have aB0_38 : pair0_region.sl.v1855_11 d L tab t1 k r g1 g2 hR hin h5 = AccMath.accVec (rowF fl tab (wL L).val (2 * t1.val) (2 * k.val + 1)) (offF fl (wL L).val (2 * t1.val) (2 * k.val + 1)) 0 38 := by
        unfold pair0_region.sl.v1855_11; rw [aB0_37]
        exact acc_step d L fl tab (wL L).val (2 * t1.val) (2 * k.val + 1) 1 _ hRB ⟨37, by decide⟩ ⟨0, by decide⟩ 0#32 rfl _ hwB_37 _ (k1_off41_form ⟨2, by decide⟩ _ _) _ _
      have aB0_39 : pair0_region.sl.v1891_11 d L tab t1 k r g1 g2 hR hin h5 = AccMath.accVec (rowF fl tab (wL L).val (2 * t1.val) (2 * k.val + 1)) (offF fl (wL L).val (2 * t1.val) (2 * k.val + 1)) 0 39 := by
        unfold pair0_region.sl.v1891_11; rw [aB0_38]
        exact acc_step d L fl tab (wL L).val (2 * t1.val) (2 * k.val + 1) 1 _ hRB ⟨38, by decide⟩ ⟨0, by decide⟩ 0#32 rfl _ hwB_38 _ (k1_off42_form ⟨2, by decide⟩ _ _) _ _
      have aB0_40 : pair0_region.sl.v1927_11 d L tab t1 k r g1 g2 hR hin h5 = AccMath.accVec (rowF fl tab (wL L).val (2 * t1.val) (2 * k.val + 1)) (offF fl (wL L).val (2 * t1.val) (2 * k.val + 1)) 0 40 := by
        unfold pair0_region.sl.v1927_11; rw [aB0_39]
        exact acc_step d L fl tab (wL L).val (2 * t1.val) (2 * k.val + 1) 1 _ hRB ⟨39, by decide⟩ ⟨0, by decide⟩ 0#32 rfl _ hwB_39 _ (k1_off43_form ⟨2, by decide⟩ _ _) _ _
      have aB0_41 : pair0_region.sl.v1963_11 d L tab t1 k r g1 g2 hR hin h5 = AccMath.accVec (rowF fl tab (wL L).val (2 * t1.val) (2 * k.val + 1)) (offF fl (wL L).val (2 * t1.val) (2 * k.val + 1)) 0 41 := by
        unfold pair0_region.sl.v1963_11; rw [aB0_40]
        exact acc_step d L fl tab (wL L).val (2 * t1.val) (2 * k.val + 1) 1 _ hRB ⟨40, by decide⟩ ⟨0, by decide⟩ 0#32 rfl _ hwB_40 _ (k1_off44_form ⟨2, by decide⟩ _ _) _ _
      have aB0_42 : pair0_region.sl.v1999_11 d L tab t1 k r g1 g2 hR hin h5 = AccMath.accVec (rowF fl tab (wL L).val (2 * t1.val) (2 * k.val + 1)) (offF fl (wL L).val (2 * t1.val) (2 * k.val + 1)) 0 42 := by
        unfold pair0_region.sl.v1999_11; rw [aB0_41]
        exact acc_step d L fl tab (wL L).val (2 * t1.val) (2 * k.val + 1) 1 _ hRB ⟨41, by decide⟩ ⟨0, by decide⟩ 0#32 rfl _ hwB_41 _ (k1_off45_form ⟨2, by decide⟩ _ _) _ _
      have aB0_43 : pair0_region.sl.v2035_11 d L tab t1 k r g1 g2 hR hin h5 = AccMath.accVec (rowF fl tab (wL L).val (2 * t1.val) (2 * k.val + 1)) (offF fl (wL L).val (2 * t1.val) (2 * k.val + 1)) 0 43 := by
        unfold pair0_region.sl.v2035_11; rw [aB0_42]
        exact acc_step d L fl tab (wL L).val (2 * t1.val) (2 * k.val + 1) 1 _ hRB ⟨42, by decide⟩ ⟨0, by decide⟩ 0#32 rfl _ hwB_42 _ (k1_off46_form ⟨2, by decide⟩ _ _) _ _
      have aB0_44 : pair0_region.sl.v2071_11 d L tab t1 k r g1 g2 hR hin h5 = AccMath.accVec (rowF fl tab (wL L).val (2 * t1.val) (2 * k.val + 1)) (offF fl (wL L).val (2 * t1.val) (2 * k.val + 1)) 0 44 := by
        unfold pair0_region.sl.v2071_11; rw [aB0_43]
        exact acc_step d L fl tab (wL L).val (2 * t1.val) (2 * k.val + 1) 1 _ hRB ⟨43, by decide⟩ ⟨0, by decide⟩ 0#32 rfl _ hwB_43 _ (k1_off47_form ⟨2, by decide⟩ _ _) _ _
      have aB0_45 : pair0_region.sl.v2107_11 d L tab t1 k r g1 g2 hR hin h5 = AccMath.accVec (rowF fl tab (wL L).val (2 * t1.val) (2 * k.val + 1)) (offF fl (wL L).val (2 * t1.val) (2 * k.val + 1)) 0 45 := by
        unfold pair0_region.sl.v2107_11; rw [aB0_44]
        exact acc_step d L fl tab (wL L).val (2 * t1.val) (2 * k.val + 1) 1 _ hRB ⟨44, by decide⟩ ⟨0, by decide⟩ 0#32 rfl _ hwB_44 _ (k1_off48_form ⟨2, by decide⟩ _ _) _ _
      have aB0_46 : pair0_region.sl.v2143_11 d L tab t1 k r g1 g2 hR hin h5 = AccMath.accVec (rowF fl tab (wL L).val (2 * t1.val) (2 * k.val + 1)) (offF fl (wL L).val (2 * t1.val) (2 * k.val + 1)) 0 46 := by
        unfold pair0_region.sl.v2143_11; rw [aB0_45]
        exact acc_step d L fl tab (wL L).val (2 * t1.val) (2 * k.val + 1) 1 _ hRB ⟨45, by decide⟩ ⟨0, by decide⟩ 0#32 rfl _ hwB_45 _ (k1_off49_form ⟨2, by decide⟩ _ _) _ _
      have aB0_47 : pair0_region.sl.v2179_11 d L tab t1 k r g1 g2 hR hin h5 = AccMath.accVec (rowF fl tab (wL L).val (2 * t1.val) (2 * k.val + 1)) (offF fl (wL L).val (2 * t1.val) (2 * k.val + 1)) 0 47 := by
        unfold pair0_region.sl.v2179_11; rw [aB0_46]
        exact acc_step d L fl tab (wL L).val (2 * t1.val) (2 * k.val + 1) 1 _ hRB ⟨46, by decide⟩ ⟨0, by decide⟩ 0#32 rfl _ hwB_46 _ (k1_off50_form ⟨2, by decide⟩ _ _) _ _
      have aB0_48 : pair0_region.sl.v2215_11 d L tab t1 k r g1 g2 hR hin h5 = AccMath.accVec (rowF fl tab (wL L).val (2 * t1.val) (2 * k.val + 1)) (offF fl (wL L).val (2 * t1.val) (2 * k.val + 1)) 0 48 := by
        unfold pair0_region.sl.v2215_11; rw [aB0_47]
        exact acc_step d L fl tab (wL L).val (2 * t1.val) (2 * k.val + 1) 1 _ hRB ⟨47, by decide⟩ ⟨0, by decide⟩ 0#32 rfl _ hwB_47 _ (k1_off51_form ⟨2, by decide⟩ _ _) _ _
      have aB0_49 : pair0_region.sl.v1580_1 d L tab t1 k r g1 g2 hR hin h5 = AccMath.accVec (rowF fl tab (wL L).val (2 * t1.val) (2 * k.val + 1)) (offF fl (wL L).val (2 * t1.val) (2 * k.val + 1)) 0 49 := by
        unfold pair0_region.sl.v1580_1; rw [aB0_48]
        exact acc_step d L fl tab (wL L).val (2 * t1.val) (2 * k.val + 1) 1 _ hRB ⟨48, by decide⟩ ⟨0, by decide⟩ 0#32 rfl _ hwB_48 _ (k1_off53_form _ _) _ _
      have aB0_50 : pair0_region.sl.v1614_1 d L tab t1 k r g1 g2 hR hin h5 = AccMath.accVec (rowF fl tab (wL L).val (2 * t1.val) (2 * k.val + 1)) (offF fl (wL L).val (2 * t1.val) (2 * k.val + 1)) 0 50 := by
        unfold pair0_region.sl.v1614_1; rw [aB0_49]
        exact acc_step d L fl tab (wL L).val (2 * t1.val) (2 * k.val + 1) 1 _ hRB ⟨49, by decide⟩ ⟨0, by decide⟩ 0#32 rfl _ hwB_49 _ (k1_off54_form _ _) _ _
      have hPB0 : ∀ x : S1x1x16.Idx, pair0_region.sl.v1643_1 d L tab t1 k r g1 g2 hR hin h5 x = Spec.bagPartial fl tab (128 * (wL L).val + 16 * (2 * t1.val) + (2 * k.val + 1)) (16 * 0 + (x 2).val) 50 := fun x => by
        unfold pair0_region.sl.v1643_1; rw [aB0_50]; exact payload_ok fl tab (wL L).val (2 * t1.val) (2 * k.val + 1) ⟨0, by decide⟩ _ x
      have aB1_0 : pair0_region.sl.v1561_1 = AccMath.accVec (rowF fl tab (wL L).val (2 * t1.val) (2 * k.val + 1)) (offF fl (wL L).val (2 * t1.val) (2 * k.val + 1)) 1 0 := acc_zero fl tab (wL L).val (2 * t1.val) (2 * k.val + 1) 1
      have aB1_1 : pair0_region.sl.v1683_9 d L tab t1 k r g1 g2 hR hin h5 = AccMath.accVec (rowF fl tab (wL L).val (2 * t1.val) (2 * k.val + 1)) (offF fl (wL L).val (2 * t1.val) (2 * k.val + 1)) 1 1 := by
        unfold pair0_region.sl.v1683_9; rw [aB1_0]
        exact acc_step d L fl tab (wL L).val (2 * t1.val) (2 * k.val + 1) 1 _ hRB ⟨0, by decide⟩ ⟨1, by decide⟩ 16#32 rfl _ hwB_0 _ (k1_off36_form ⟨0, by decide⟩ _ _) _ _
      have aB1_2 : pair0_region.sl.v1719_9 d L tab t1 k r g1 g2 hR hin h5 = AccMath.accVec (rowF fl tab (wL L).val (2 * t1.val) (2 * k.val + 1)) (offF fl (wL L).val (2 * t1.val) (2 * k.val + 1)) 1 2 := by
        unfold pair0_region.sl.v1719_9; rw [aB1_1]
        exact acc_step d L fl tab (wL L).val (2 * t1.val) (2 * k.val + 1) 1 _ hRB ⟨1, by decide⟩ ⟨1, by decide⟩ 16#32 rfl _ hwB_1 _ (k1_off37_form ⟨0, by decide⟩ _ _) _ _
      have aB1_3 : pair0_region.sl.v1755_9 d L tab t1 k r g1 g2 hR hin h5 = AccMath.accVec (rowF fl tab (wL L).val (2 * t1.val) (2 * k.val + 1)) (offF fl (wL L).val (2 * t1.val) (2 * k.val + 1)) 1 3 := by
        unfold pair0_region.sl.v1755_9; rw [aB1_2]
        exact acc_step d L fl tab (wL L).val (2 * t1.val) (2 * k.val + 1) 1 _ hRB ⟨2, by decide⟩ ⟨1, by decide⟩ 16#32 rfl _ hwB_2 _ (k1_off38_form ⟨0, by decide⟩ _ _) _ _
      have aB1_4 : pair0_region.sl.v1791_9 d L tab t1 k r g1 g2 hR hin h5 = AccMath.accVec (rowF fl tab (wL L).val (2 * t1.val) (2 * k.val + 1)) (offF fl (wL L).val (2 * t1.val) (2 * k.val + 1)) 1 4 := by
        unfold pair0_region.sl.v1791_9; rw [aB1_3]
        exact acc_step d L fl tab (wL L).val (2 * t1.val) (2 * k.val + 1) 1 _ hRB ⟨3, by decide⟩ ⟨1, by decide⟩ 16#32 rfl _ hwB_3 _ (k1_off39_form ⟨0, by decide⟩ _ _) _ _
      have aB1_5 : pair0_region.sl.v1827_9 d L tab t1 k r g1 g2 hR hin h5 = AccMath.accVec (rowF fl tab (wL L).val (2 * t1.val) (2 * k.val + 1)) (offF fl (wL L).val (2 * t1.val) (2 * k.val + 1)) 1 5 := by
        unfold pair0_region.sl.v1827_9; rw [aB1_4]
        exact acc_step d L fl tab (wL L).val (2 * t1.val) (2 * k.val + 1) 1 _ hRB ⟨4, by decide⟩ ⟨1, by decide⟩ 16#32 rfl _ hwB_4 _ (k1_off40_form ⟨0, by decide⟩ _ _) _ _
      have aB1_6 : pair0_region.sl.v1863_9 d L tab t1 k r g1 g2 hR hin h5 = AccMath.accVec (rowF fl tab (wL L).val (2 * t1.val) (2 * k.val + 1)) (offF fl (wL L).val (2 * t1.val) (2 * k.val + 1)) 1 6 := by
        unfold pair0_region.sl.v1863_9; rw [aB1_5]
        exact acc_step d L fl tab (wL L).val (2 * t1.val) (2 * k.val + 1) 1 _ hRB ⟨5, by decide⟩ ⟨1, by decide⟩ 16#32 rfl _ hwB_5 _ (k1_off41_form ⟨0, by decide⟩ _ _) _ _
      have aB1_7 : pair0_region.sl.v1899_9 d L tab t1 k r g1 g2 hR hin h5 = AccMath.accVec (rowF fl tab (wL L).val (2 * t1.val) (2 * k.val + 1)) (offF fl (wL L).val (2 * t1.val) (2 * k.val + 1)) 1 7 := by
        unfold pair0_region.sl.v1899_9; rw [aB1_6]
        exact acc_step d L fl tab (wL L).val (2 * t1.val) (2 * k.val + 1) 1 _ hRB ⟨6, by decide⟩ ⟨1, by decide⟩ 16#32 rfl _ hwB_6 _ (k1_off42_form ⟨0, by decide⟩ _ _) _ _
      have aB1_8 : pair0_region.sl.v1935_9 d L tab t1 k r g1 g2 hR hin h5 = AccMath.accVec (rowF fl tab (wL L).val (2 * t1.val) (2 * k.val + 1)) (offF fl (wL L).val (2 * t1.val) (2 * k.val + 1)) 1 8 := by
        unfold pair0_region.sl.v1935_9; rw [aB1_7]
        exact acc_step d L fl tab (wL L).val (2 * t1.val) (2 * k.val + 1) 1 _ hRB ⟨7, by decide⟩ ⟨1, by decide⟩ 16#32 rfl _ hwB_7 _ (k1_off43_form ⟨0, by decide⟩ _ _) _ _
      have aB1_9 : pair0_region.sl.v1971_9 d L tab t1 k r g1 g2 hR hin h5 = AccMath.accVec (rowF fl tab (wL L).val (2 * t1.val) (2 * k.val + 1)) (offF fl (wL L).val (2 * t1.val) (2 * k.val + 1)) 1 9 := by
        unfold pair0_region.sl.v1971_9; rw [aB1_8]
        exact acc_step d L fl tab (wL L).val (2 * t1.val) (2 * k.val + 1) 1 _ hRB ⟨8, by decide⟩ ⟨1, by decide⟩ 16#32 rfl _ hwB_8 _ (k1_off44_form ⟨0, by decide⟩ _ _) _ _
      have aB1_10 : pair0_region.sl.v2007_9 d L tab t1 k r g1 g2 hR hin h5 = AccMath.accVec (rowF fl tab (wL L).val (2 * t1.val) (2 * k.val + 1)) (offF fl (wL L).val (2 * t1.val) (2 * k.val + 1)) 1 10 := by
        unfold pair0_region.sl.v2007_9; rw [aB1_9]
        exact acc_step d L fl tab (wL L).val (2 * t1.val) (2 * k.val + 1) 1 _ hRB ⟨9, by decide⟩ ⟨1, by decide⟩ 16#32 rfl _ hwB_9 _ (k1_off45_form ⟨0, by decide⟩ _ _) _ _
      have aB1_11 : pair0_region.sl.v2043_9 d L tab t1 k r g1 g2 hR hin h5 = AccMath.accVec (rowF fl tab (wL L).val (2 * t1.val) (2 * k.val + 1)) (offF fl (wL L).val (2 * t1.val) (2 * k.val + 1)) 1 11 := by
        unfold pair0_region.sl.v2043_9; rw [aB1_10]
        exact acc_step d L fl tab (wL L).val (2 * t1.val) (2 * k.val + 1) 1 _ hRB ⟨10, by decide⟩ ⟨1, by decide⟩ 16#32 rfl _ hwB_10 _ (k1_off46_form ⟨0, by decide⟩ _ _) _ _
      have aB1_12 : pair0_region.sl.v2079_9 d L tab t1 k r g1 g2 hR hin h5 = AccMath.accVec (rowF fl tab (wL L).val (2 * t1.val) (2 * k.val + 1)) (offF fl (wL L).val (2 * t1.val) (2 * k.val + 1)) 1 12 := by
        unfold pair0_region.sl.v2079_9; rw [aB1_11]
        exact acc_step d L fl tab (wL L).val (2 * t1.val) (2 * k.val + 1) 1 _ hRB ⟨11, by decide⟩ ⟨1, by decide⟩ 16#32 rfl _ hwB_11 _ (k1_off47_form ⟨0, by decide⟩ _ _) _ _
      have aB1_13 : pair0_region.sl.v2115_9 d L tab t1 k r g1 g2 hR hin h5 = AccMath.accVec (rowF fl tab (wL L).val (2 * t1.val) (2 * k.val + 1)) (offF fl (wL L).val (2 * t1.val) (2 * k.val + 1)) 1 13 := by
        unfold pair0_region.sl.v2115_9; rw [aB1_12]
        exact acc_step d L fl tab (wL L).val (2 * t1.val) (2 * k.val + 1) 1 _ hRB ⟨12, by decide⟩ ⟨1, by decide⟩ 16#32 rfl _ hwB_12 _ (k1_off48_form ⟨0, by decide⟩ _ _) _ _
      have aB1_14 : pair0_region.sl.v2151_9 d L tab t1 k r g1 g2 hR hin h5 = AccMath.accVec (rowF fl tab (wL L).val (2 * t1.val) (2 * k.val + 1)) (offF fl (wL L).val (2 * t1.val) (2 * k.val + 1)) 1 14 := by
        unfold pair0_region.sl.v2151_9; rw [aB1_13]
        exact acc_step d L fl tab (wL L).val (2 * t1.val) (2 * k.val + 1) 1 _ hRB ⟨13, by decide⟩ ⟨1, by decide⟩ 16#32 rfl _ hwB_13 _ (k1_off49_form ⟨0, by decide⟩ _ _) _ _
      have aB1_15 : pair0_region.sl.v2187_9 d L tab t1 k r g1 g2 hR hin h5 = AccMath.accVec (rowF fl tab (wL L).val (2 * t1.val) (2 * k.val + 1)) (offF fl (wL L).val (2 * t1.val) (2 * k.val + 1)) 1 15 := by
        unfold pair0_region.sl.v2187_9; rw [aB1_14]
        exact acc_step d L fl tab (wL L).val (2 * t1.val) (2 * k.val + 1) 1 _ hRB ⟨14, by decide⟩ ⟨1, by decide⟩ 16#32 rfl _ hwB_14 _ (k1_off50_form ⟨0, by decide⟩ _ _) _ _
      have aB1_16 : pair0_region.sl.v2223_9 d L tab t1 k r g1 g2 hR hin h5 = AccMath.accVec (rowF fl tab (wL L).val (2 * t1.val) (2 * k.val + 1)) (offF fl (wL L).val (2 * t1.val) (2 * k.val + 1)) 1 16 := by
        unfold pair0_region.sl.v2223_9; rw [aB1_15]
        exact acc_step d L fl tab (wL L).val (2 * t1.val) (2 * k.val + 1) 1 _ hRB ⟨15, by decide⟩ ⟨1, by decide⟩ 16#32 rfl _ hwB_15 _ (k1_off51_form ⟨0, by decide⟩ _ _) _ _
      have aB1_17 : pair0_region.sl.v1683_10 d L tab t1 k r g1 g2 hR hin h5 = AccMath.accVec (rowF fl tab (wL L).val (2 * t1.val) (2 * k.val + 1)) (offF fl (wL L).val (2 * t1.val) (2 * k.val + 1)) 1 17 := by
        unfold pair0_region.sl.v1683_10; rw [aB1_16]
        exact acc_step d L fl tab (wL L).val (2 * t1.val) (2 * k.val + 1) 1 _ hRB ⟨16, by decide⟩ ⟨1, by decide⟩ 16#32 rfl _ hwB_16 _ (k1_off36_form ⟨1, by decide⟩ _ _) _ _
      have aB1_18 : pair0_region.sl.v1719_10 d L tab t1 k r g1 g2 hR hin h5 = AccMath.accVec (rowF fl tab (wL L).val (2 * t1.val) (2 * k.val + 1)) (offF fl (wL L).val (2 * t1.val) (2 * k.val + 1)) 1 18 := by
        unfold pair0_region.sl.v1719_10; rw [aB1_17]
        exact acc_step d L fl tab (wL L).val (2 * t1.val) (2 * k.val + 1) 1 _ hRB ⟨17, by decide⟩ ⟨1, by decide⟩ 16#32 rfl _ hwB_17 _ (k1_off37_form ⟨1, by decide⟩ _ _) _ _
      have aB1_19 : pair0_region.sl.v1755_10 d L tab t1 k r g1 g2 hR hin h5 = AccMath.accVec (rowF fl tab (wL L).val (2 * t1.val) (2 * k.val + 1)) (offF fl (wL L).val (2 * t1.val) (2 * k.val + 1)) 1 19 := by
        unfold pair0_region.sl.v1755_10; rw [aB1_18]
        exact acc_step d L fl tab (wL L).val (2 * t1.val) (2 * k.val + 1) 1 _ hRB ⟨18, by decide⟩ ⟨1, by decide⟩ 16#32 rfl _ hwB_18 _ (k1_off38_form ⟨1, by decide⟩ _ _) _ _
      have aB1_20 : pair0_region.sl.v1791_10 d L tab t1 k r g1 g2 hR hin h5 = AccMath.accVec (rowF fl tab (wL L).val (2 * t1.val) (2 * k.val + 1)) (offF fl (wL L).val (2 * t1.val) (2 * k.val + 1)) 1 20 := by
        unfold pair0_region.sl.v1791_10; rw [aB1_19]
        exact acc_step d L fl tab (wL L).val (2 * t1.val) (2 * k.val + 1) 1 _ hRB ⟨19, by decide⟩ ⟨1, by decide⟩ 16#32 rfl _ hwB_19 _ (k1_off39_form ⟨1, by decide⟩ _ _) _ _
      have aB1_21 : pair0_region.sl.v1827_10 d L tab t1 k r g1 g2 hR hin h5 = AccMath.accVec (rowF fl tab (wL L).val (2 * t1.val) (2 * k.val + 1)) (offF fl (wL L).val (2 * t1.val) (2 * k.val + 1)) 1 21 := by
        unfold pair0_region.sl.v1827_10; rw [aB1_20]
        exact acc_step d L fl tab (wL L).val (2 * t1.val) (2 * k.val + 1) 1 _ hRB ⟨20, by decide⟩ ⟨1, by decide⟩ 16#32 rfl _ hwB_20 _ (k1_off40_form ⟨1, by decide⟩ _ _) _ _
      have aB1_22 : pair0_region.sl.v1863_10 d L tab t1 k r g1 g2 hR hin h5 = AccMath.accVec (rowF fl tab (wL L).val (2 * t1.val) (2 * k.val + 1)) (offF fl (wL L).val (2 * t1.val) (2 * k.val + 1)) 1 22 := by
        unfold pair0_region.sl.v1863_10; rw [aB1_21]
        exact acc_step d L fl tab (wL L).val (2 * t1.val) (2 * k.val + 1) 1 _ hRB ⟨21, by decide⟩ ⟨1, by decide⟩ 16#32 rfl _ hwB_21 _ (k1_off41_form ⟨1, by decide⟩ _ _) _ _
      have aB1_23 : pair0_region.sl.v1899_10 d L tab t1 k r g1 g2 hR hin h5 = AccMath.accVec (rowF fl tab (wL L).val (2 * t1.val) (2 * k.val + 1)) (offF fl (wL L).val (2 * t1.val) (2 * k.val + 1)) 1 23 := by
        unfold pair0_region.sl.v1899_10; rw [aB1_22]
        exact acc_step d L fl tab (wL L).val (2 * t1.val) (2 * k.val + 1) 1 _ hRB ⟨22, by decide⟩ ⟨1, by decide⟩ 16#32 rfl _ hwB_22 _ (k1_off42_form ⟨1, by decide⟩ _ _) _ _
      have aB1_24 : pair0_region.sl.v1935_10 d L tab t1 k r g1 g2 hR hin h5 = AccMath.accVec (rowF fl tab (wL L).val (2 * t1.val) (2 * k.val + 1)) (offF fl (wL L).val (2 * t1.val) (2 * k.val + 1)) 1 24 := by
        unfold pair0_region.sl.v1935_10; rw [aB1_23]
        exact acc_step d L fl tab (wL L).val (2 * t1.val) (2 * k.val + 1) 1 _ hRB ⟨23, by decide⟩ ⟨1, by decide⟩ 16#32 rfl _ hwB_23 _ (k1_off43_form ⟨1, by decide⟩ _ _) _ _
      have aB1_25 : pair0_region.sl.v1971_10 d L tab t1 k r g1 g2 hR hin h5 = AccMath.accVec (rowF fl tab (wL L).val (2 * t1.val) (2 * k.val + 1)) (offF fl (wL L).val (2 * t1.val) (2 * k.val + 1)) 1 25 := by
        unfold pair0_region.sl.v1971_10; rw [aB1_24]
        exact acc_step d L fl tab (wL L).val (2 * t1.val) (2 * k.val + 1) 1 _ hRB ⟨24, by decide⟩ ⟨1, by decide⟩ 16#32 rfl _ hwB_24 _ (k1_off44_form ⟨1, by decide⟩ _ _) _ _
      have aB1_26 : pair0_region.sl.v2007_10 d L tab t1 k r g1 g2 hR hin h5 = AccMath.accVec (rowF fl tab (wL L).val (2 * t1.val) (2 * k.val + 1)) (offF fl (wL L).val (2 * t1.val) (2 * k.val + 1)) 1 26 := by
        unfold pair0_region.sl.v2007_10; rw [aB1_25]
        exact acc_step d L fl tab (wL L).val (2 * t1.val) (2 * k.val + 1) 1 _ hRB ⟨25, by decide⟩ ⟨1, by decide⟩ 16#32 rfl _ hwB_25 _ (k1_off45_form ⟨1, by decide⟩ _ _) _ _
      have aB1_27 : pair0_region.sl.v2043_10 d L tab t1 k r g1 g2 hR hin h5 = AccMath.accVec (rowF fl tab (wL L).val (2 * t1.val) (2 * k.val + 1)) (offF fl (wL L).val (2 * t1.val) (2 * k.val + 1)) 1 27 := by
        unfold pair0_region.sl.v2043_10; rw [aB1_26]
        exact acc_step d L fl tab (wL L).val (2 * t1.val) (2 * k.val + 1) 1 _ hRB ⟨26, by decide⟩ ⟨1, by decide⟩ 16#32 rfl _ hwB_26 _ (k1_off46_form ⟨1, by decide⟩ _ _) _ _
      have aB1_28 : pair0_region.sl.v2079_10 d L tab t1 k r g1 g2 hR hin h5 = AccMath.accVec (rowF fl tab (wL L).val (2 * t1.val) (2 * k.val + 1)) (offF fl (wL L).val (2 * t1.val) (2 * k.val + 1)) 1 28 := by
        unfold pair0_region.sl.v2079_10; rw [aB1_27]
        exact acc_step d L fl tab (wL L).val (2 * t1.val) (2 * k.val + 1) 1 _ hRB ⟨27, by decide⟩ ⟨1, by decide⟩ 16#32 rfl _ hwB_27 _ (k1_off47_form ⟨1, by decide⟩ _ _) _ _
      have aB1_29 : pair0_region.sl.v2115_10 d L tab t1 k r g1 g2 hR hin h5 = AccMath.accVec (rowF fl tab (wL L).val (2 * t1.val) (2 * k.val + 1)) (offF fl (wL L).val (2 * t1.val) (2 * k.val + 1)) 1 29 := by
        unfold pair0_region.sl.v2115_10; rw [aB1_28]
        exact acc_step d L fl tab (wL L).val (2 * t1.val) (2 * k.val + 1) 1 _ hRB ⟨28, by decide⟩ ⟨1, by decide⟩ 16#32 rfl _ hwB_28 _ (k1_off48_form ⟨1, by decide⟩ _ _) _ _
      have aB1_30 : pair0_region.sl.v2151_10 d L tab t1 k r g1 g2 hR hin h5 = AccMath.accVec (rowF fl tab (wL L).val (2 * t1.val) (2 * k.val + 1)) (offF fl (wL L).val (2 * t1.val) (2 * k.val + 1)) 1 30 := by
        unfold pair0_region.sl.v2151_10; rw [aB1_29]
        exact acc_step d L fl tab (wL L).val (2 * t1.val) (2 * k.val + 1) 1 _ hRB ⟨29, by decide⟩ ⟨1, by decide⟩ 16#32 rfl _ hwB_29 _ (k1_off49_form ⟨1, by decide⟩ _ _) _ _
      have aB1_31 : pair0_region.sl.v2187_10 d L tab t1 k r g1 g2 hR hin h5 = AccMath.accVec (rowF fl tab (wL L).val (2 * t1.val) (2 * k.val + 1)) (offF fl (wL L).val (2 * t1.val) (2 * k.val + 1)) 1 31 := by
        unfold pair0_region.sl.v2187_10; rw [aB1_30]
        exact acc_step d L fl tab (wL L).val (2 * t1.val) (2 * k.val + 1) 1 _ hRB ⟨30, by decide⟩ ⟨1, by decide⟩ 16#32 rfl _ hwB_30 _ (k1_off50_form ⟨1, by decide⟩ _ _) _ _
      have aB1_32 : pair0_region.sl.v2223_10 d L tab t1 k r g1 g2 hR hin h5 = AccMath.accVec (rowF fl tab (wL L).val (2 * t1.val) (2 * k.val + 1)) (offF fl (wL L).val (2 * t1.val) (2 * k.val + 1)) 1 32 := by
        unfold pair0_region.sl.v2223_10; rw [aB1_31]
        exact acc_step d L fl tab (wL L).val (2 * t1.val) (2 * k.val + 1) 1 _ hRB ⟨31, by decide⟩ ⟨1, by decide⟩ 16#32 rfl _ hwB_31 _ (k1_off51_form ⟨1, by decide⟩ _ _) _ _
      have aB1_33 : pair0_region.sl.v1683_11 d L tab t1 k r g1 g2 hR hin h5 = AccMath.accVec (rowF fl tab (wL L).val (2 * t1.val) (2 * k.val + 1)) (offF fl (wL L).val (2 * t1.val) (2 * k.val + 1)) 1 33 := by
        unfold pair0_region.sl.v1683_11; rw [aB1_32]
        exact acc_step d L fl tab (wL L).val (2 * t1.val) (2 * k.val + 1) 1 _ hRB ⟨32, by decide⟩ ⟨1, by decide⟩ 16#32 rfl _ hwB_32 _ (k1_off36_form ⟨2, by decide⟩ _ _) _ _
      have aB1_34 : pair0_region.sl.v1719_11 d L tab t1 k r g1 g2 hR hin h5 = AccMath.accVec (rowF fl tab (wL L).val (2 * t1.val) (2 * k.val + 1)) (offF fl (wL L).val (2 * t1.val) (2 * k.val + 1)) 1 34 := by
        unfold pair0_region.sl.v1719_11; rw [aB1_33]
        exact acc_step d L fl tab (wL L).val (2 * t1.val) (2 * k.val + 1) 1 _ hRB ⟨33, by decide⟩ ⟨1, by decide⟩ 16#32 rfl _ hwB_33 _ (k1_off37_form ⟨2, by decide⟩ _ _) _ _
      have aB1_35 : pair0_region.sl.v1755_11 d L tab t1 k r g1 g2 hR hin h5 = AccMath.accVec (rowF fl tab (wL L).val (2 * t1.val) (2 * k.val + 1)) (offF fl (wL L).val (2 * t1.val) (2 * k.val + 1)) 1 35 := by
        unfold pair0_region.sl.v1755_11; rw [aB1_34]
        exact acc_step d L fl tab (wL L).val (2 * t1.val) (2 * k.val + 1) 1 _ hRB ⟨34, by decide⟩ ⟨1, by decide⟩ 16#32 rfl _ hwB_34 _ (k1_off38_form ⟨2, by decide⟩ _ _) _ _
      have aB1_36 : pair0_region.sl.v1791_11 d L tab t1 k r g1 g2 hR hin h5 = AccMath.accVec (rowF fl tab (wL L).val (2 * t1.val) (2 * k.val + 1)) (offF fl (wL L).val (2 * t1.val) (2 * k.val + 1)) 1 36 := by
        unfold pair0_region.sl.v1791_11; rw [aB1_35]
        exact acc_step d L fl tab (wL L).val (2 * t1.val) (2 * k.val + 1) 1 _ hRB ⟨35, by decide⟩ ⟨1, by decide⟩ 16#32 rfl _ hwB_35 _ (k1_off39_form ⟨2, by decide⟩ _ _) _ _
      have aB1_37 : pair0_region.sl.v1827_11 d L tab t1 k r g1 g2 hR hin h5 = AccMath.accVec (rowF fl tab (wL L).val (2 * t1.val) (2 * k.val + 1)) (offF fl (wL L).val (2 * t1.val) (2 * k.val + 1)) 1 37 := by
        unfold pair0_region.sl.v1827_11; rw [aB1_36]
        exact acc_step d L fl tab (wL L).val (2 * t1.val) (2 * k.val + 1) 1 _ hRB ⟨36, by decide⟩ ⟨1, by decide⟩ 16#32 rfl _ hwB_36 _ (k1_off40_form ⟨2, by decide⟩ _ _) _ _
      have aB1_38 : pair0_region.sl.v1863_11 d L tab t1 k r g1 g2 hR hin h5 = AccMath.accVec (rowF fl tab (wL L).val (2 * t1.val) (2 * k.val + 1)) (offF fl (wL L).val (2 * t1.val) (2 * k.val + 1)) 1 38 := by
        unfold pair0_region.sl.v1863_11; rw [aB1_37]
        exact acc_step d L fl tab (wL L).val (2 * t1.val) (2 * k.val + 1) 1 _ hRB ⟨37, by decide⟩ ⟨1, by decide⟩ 16#32 rfl _ hwB_37 _ (k1_off41_form ⟨2, by decide⟩ _ _) _ _
      have aB1_39 : pair0_region.sl.v1899_11 d L tab t1 k r g1 g2 hR hin h5 = AccMath.accVec (rowF fl tab (wL L).val (2 * t1.val) (2 * k.val + 1)) (offF fl (wL L).val (2 * t1.val) (2 * k.val + 1)) 1 39 := by
        unfold pair0_region.sl.v1899_11; rw [aB1_38]
        exact acc_step d L fl tab (wL L).val (2 * t1.val) (2 * k.val + 1) 1 _ hRB ⟨38, by decide⟩ ⟨1, by decide⟩ 16#32 rfl _ hwB_38 _ (k1_off42_form ⟨2, by decide⟩ _ _) _ _
      have aB1_40 : pair0_region.sl.v1935_11 d L tab t1 k r g1 g2 hR hin h5 = AccMath.accVec (rowF fl tab (wL L).val (2 * t1.val) (2 * k.val + 1)) (offF fl (wL L).val (2 * t1.val) (2 * k.val + 1)) 1 40 := by
        unfold pair0_region.sl.v1935_11; rw [aB1_39]
        exact acc_step d L fl tab (wL L).val (2 * t1.val) (2 * k.val + 1) 1 _ hRB ⟨39, by decide⟩ ⟨1, by decide⟩ 16#32 rfl _ hwB_39 _ (k1_off43_form ⟨2, by decide⟩ _ _) _ _
      have aB1_41 : pair0_region.sl.v1971_11 d L tab t1 k r g1 g2 hR hin h5 = AccMath.accVec (rowF fl tab (wL L).val (2 * t1.val) (2 * k.val + 1)) (offF fl (wL L).val (2 * t1.val) (2 * k.val + 1)) 1 41 := by
        unfold pair0_region.sl.v1971_11; rw [aB1_40]
        exact acc_step d L fl tab (wL L).val (2 * t1.val) (2 * k.val + 1) 1 _ hRB ⟨40, by decide⟩ ⟨1, by decide⟩ 16#32 rfl _ hwB_40 _ (k1_off44_form ⟨2, by decide⟩ _ _) _ _
      have aB1_42 : pair0_region.sl.v2007_11 d L tab t1 k r g1 g2 hR hin h5 = AccMath.accVec (rowF fl tab (wL L).val (2 * t1.val) (2 * k.val + 1)) (offF fl (wL L).val (2 * t1.val) (2 * k.val + 1)) 1 42 := by
        unfold pair0_region.sl.v2007_11; rw [aB1_41]
        exact acc_step d L fl tab (wL L).val (2 * t1.val) (2 * k.val + 1) 1 _ hRB ⟨41, by decide⟩ ⟨1, by decide⟩ 16#32 rfl _ hwB_41 _ (k1_off45_form ⟨2, by decide⟩ _ _) _ _
      have aB1_43 : pair0_region.sl.v2043_11 d L tab t1 k r g1 g2 hR hin h5 = AccMath.accVec (rowF fl tab (wL L).val (2 * t1.val) (2 * k.val + 1)) (offF fl (wL L).val (2 * t1.val) (2 * k.val + 1)) 1 43 := by
        unfold pair0_region.sl.v2043_11; rw [aB1_42]
        exact acc_step d L fl tab (wL L).val (2 * t1.val) (2 * k.val + 1) 1 _ hRB ⟨42, by decide⟩ ⟨1, by decide⟩ 16#32 rfl _ hwB_42 _ (k1_off46_form ⟨2, by decide⟩ _ _) _ _
      have aB1_44 : pair0_region.sl.v2079_11 d L tab t1 k r g1 g2 hR hin h5 = AccMath.accVec (rowF fl tab (wL L).val (2 * t1.val) (2 * k.val + 1)) (offF fl (wL L).val (2 * t1.val) (2 * k.val + 1)) 1 44 := by
        unfold pair0_region.sl.v2079_11; rw [aB1_43]
        exact acc_step d L fl tab (wL L).val (2 * t1.val) (2 * k.val + 1) 1 _ hRB ⟨43, by decide⟩ ⟨1, by decide⟩ 16#32 rfl _ hwB_43 _ (k1_off47_form ⟨2, by decide⟩ _ _) _ _
      have aB1_45 : pair0_region.sl.v2115_11 d L tab t1 k r g1 g2 hR hin h5 = AccMath.accVec (rowF fl tab (wL L).val (2 * t1.val) (2 * k.val + 1)) (offF fl (wL L).val (2 * t1.val) (2 * k.val + 1)) 1 45 := by
        unfold pair0_region.sl.v2115_11; rw [aB1_44]
        exact acc_step d L fl tab (wL L).val (2 * t1.val) (2 * k.val + 1) 1 _ hRB ⟨44, by decide⟩ ⟨1, by decide⟩ 16#32 rfl _ hwB_44 _ (k1_off48_form ⟨2, by decide⟩ _ _) _ _
      have aB1_46 : pair0_region.sl.v2151_11 d L tab t1 k r g1 g2 hR hin h5 = AccMath.accVec (rowF fl tab (wL L).val (2 * t1.val) (2 * k.val + 1)) (offF fl (wL L).val (2 * t1.val) (2 * k.val + 1)) 1 46 := by
        unfold pair0_region.sl.v2151_11; rw [aB1_45]
        exact acc_step d L fl tab (wL L).val (2 * t1.val) (2 * k.val + 1) 1 _ hRB ⟨45, by decide⟩ ⟨1, by decide⟩ 16#32 rfl _ hwB_45 _ (k1_off49_form ⟨2, by decide⟩ _ _) _ _
      have aB1_47 : pair0_region.sl.v2187_11 d L tab t1 k r g1 g2 hR hin h5 = AccMath.accVec (rowF fl tab (wL L).val (2 * t1.val) (2 * k.val + 1)) (offF fl (wL L).val (2 * t1.val) (2 * k.val + 1)) 1 47 := by
        unfold pair0_region.sl.v2187_11; rw [aB1_46]
        exact acc_step d L fl tab (wL L).val (2 * t1.val) (2 * k.val + 1) 1 _ hRB ⟨46, by decide⟩ ⟨1, by decide⟩ 16#32 rfl _ hwB_46 _ (k1_off50_form ⟨2, by decide⟩ _ _) _ _
      have aB1_48 : pair0_region.sl.v2223_11 d L tab t1 k r g1 g2 hR hin h5 = AccMath.accVec (rowF fl tab (wL L).val (2 * t1.val) (2 * k.val + 1)) (offF fl (wL L).val (2 * t1.val) (2 * k.val + 1)) 1 48 := by
        unfold pair0_region.sl.v2223_11; rw [aB1_47]
        exact acc_step d L fl tab (wL L).val (2 * t1.val) (2 * k.val + 1) 1 _ hRB ⟨47, by decide⟩ ⟨1, by decide⟩ 16#32 rfl _ hwB_47 _ (k1_off51_form ⟨2, by decide⟩ _ _) _ _
      have aB1_49 : pair0_region.sl.v1588_1 d L tab t1 k r g1 g2 hR hin h5 = AccMath.accVec (rowF fl tab (wL L).val (2 * t1.val) (2 * k.val + 1)) (offF fl (wL L).val (2 * t1.val) (2 * k.val + 1)) 1 49 := by
        unfold pair0_region.sl.v1588_1; rw [aB1_48]
        exact acc_step d L fl tab (wL L).val (2 * t1.val) (2 * k.val + 1) 1 _ hRB ⟨48, by decide⟩ ⟨1, by decide⟩ 16#32 rfl _ hwB_48 _ (k1_off53_form _ _) _ _
      have aB1_50 : pair0_region.sl.v1622_1 d L tab t1 k r g1 g2 hR hin h5 = AccMath.accVec (rowF fl tab (wL L).val (2 * t1.val) (2 * k.val + 1)) (offF fl (wL L).val (2 * t1.val) (2 * k.val + 1)) 1 50 := by
        unfold pair0_region.sl.v1622_1; rw [aB1_49]
        exact acc_step d L fl tab (wL L).val (2 * t1.val) (2 * k.val + 1) 1 _ hRB ⟨49, by decide⟩ ⟨1, by decide⟩ 16#32 rfl _ hwB_49 _ (k1_off54_form _ _) _ _
      have hPB1 : ∀ x : S1x1x16.Idx, pair0_region.sl.v1648_1 d L tab t1 k r g1 g2 hR hin h5 x = Spec.bagPartial fl tab (128 * (wL L).val + 16 * (2 * t1.val) + (2 * k.val + 1)) (16 * 1 + (x 2).val) 50 := fun x => by
        unfold pair0_region.sl.v1648_1; rw [aB1_50]; exact payload_ok fl tab (wL L).val (2 * t1.val) (2 * k.val + 1) ⟨1, by decide⟩ _ x
      have aB2_0 : pair0_region.sl.v1561_1 = AccMath.accVec (rowF fl tab (wL L).val (2 * t1.val) (2 * k.val + 1)) (offF fl (wL L).val (2 * t1.val) (2 * k.val + 1)) 2 0 := acc_zero fl tab (wL L).val (2 * t1.val) (2 * k.val + 1) 2
      have aB2_1 : pair0_region.sl.v1691_9 d L tab t1 k r g1 g2 hR hin h5 = AccMath.accVec (rowF fl tab (wL L).val (2 * t1.val) (2 * k.val + 1)) (offF fl (wL L).val (2 * t1.val) (2 * k.val + 1)) 2 1 := by
        unfold pair0_region.sl.v1691_9; rw [aB2_0]
        exact acc_step d L fl tab (wL L).val (2 * t1.val) (2 * k.val + 1) 1 _ hRB ⟨0, by decide⟩ ⟨2, by decide⟩ 32#32 rfl _ hwB_0 _ (k1_off36_form ⟨0, by decide⟩ _ _) _ _
      have aB2_2 : pair0_region.sl.v1727_9 d L tab t1 k r g1 g2 hR hin h5 = AccMath.accVec (rowF fl tab (wL L).val (2 * t1.val) (2 * k.val + 1)) (offF fl (wL L).val (2 * t1.val) (2 * k.val + 1)) 2 2 := by
        unfold pair0_region.sl.v1727_9; rw [aB2_1]
        exact acc_step d L fl tab (wL L).val (2 * t1.val) (2 * k.val + 1) 1 _ hRB ⟨1, by decide⟩ ⟨2, by decide⟩ 32#32 rfl _ hwB_1 _ (k1_off37_form ⟨0, by decide⟩ _ _) _ _
      have aB2_3 : pair0_region.sl.v1763_9 d L tab t1 k r g1 g2 hR hin h5 = AccMath.accVec (rowF fl tab (wL L).val (2 * t1.val) (2 * k.val + 1)) (offF fl (wL L).val (2 * t1.val) (2 * k.val + 1)) 2 3 := by
        unfold pair0_region.sl.v1763_9; rw [aB2_2]
        exact acc_step d L fl tab (wL L).val (2 * t1.val) (2 * k.val + 1) 1 _ hRB ⟨2, by decide⟩ ⟨2, by decide⟩ 32#32 rfl _ hwB_2 _ (k1_off38_form ⟨0, by decide⟩ _ _) _ _
      have aB2_4 : pair0_region.sl.v1799_9 d L tab t1 k r g1 g2 hR hin h5 = AccMath.accVec (rowF fl tab (wL L).val (2 * t1.val) (2 * k.val + 1)) (offF fl (wL L).val (2 * t1.val) (2 * k.val + 1)) 2 4 := by
        unfold pair0_region.sl.v1799_9; rw [aB2_3]
        exact acc_step d L fl tab (wL L).val (2 * t1.val) (2 * k.val + 1) 1 _ hRB ⟨3, by decide⟩ ⟨2, by decide⟩ 32#32 rfl _ hwB_3 _ (k1_off39_form ⟨0, by decide⟩ _ _) _ _
      have aB2_5 : pair0_region.sl.v1835_9 d L tab t1 k r g1 g2 hR hin h5 = AccMath.accVec (rowF fl tab (wL L).val (2 * t1.val) (2 * k.val + 1)) (offF fl (wL L).val (2 * t1.val) (2 * k.val + 1)) 2 5 := by
        unfold pair0_region.sl.v1835_9; rw [aB2_4]
        exact acc_step d L fl tab (wL L).val (2 * t1.val) (2 * k.val + 1) 1 _ hRB ⟨4, by decide⟩ ⟨2, by decide⟩ 32#32 rfl _ hwB_4 _ (k1_off40_form ⟨0, by decide⟩ _ _) _ _
      have aB2_6 : pair0_region.sl.v1871_9 d L tab t1 k r g1 g2 hR hin h5 = AccMath.accVec (rowF fl tab (wL L).val (2 * t1.val) (2 * k.val + 1)) (offF fl (wL L).val (2 * t1.val) (2 * k.val + 1)) 2 6 := by
        unfold pair0_region.sl.v1871_9; rw [aB2_5]
        exact acc_step d L fl tab (wL L).val (2 * t1.val) (2 * k.val + 1) 1 _ hRB ⟨5, by decide⟩ ⟨2, by decide⟩ 32#32 rfl _ hwB_5 _ (k1_off41_form ⟨0, by decide⟩ _ _) _ _
      have aB2_7 : pair0_region.sl.v1907_9 d L tab t1 k r g1 g2 hR hin h5 = AccMath.accVec (rowF fl tab (wL L).val (2 * t1.val) (2 * k.val + 1)) (offF fl (wL L).val (2 * t1.val) (2 * k.val + 1)) 2 7 := by
        unfold pair0_region.sl.v1907_9; rw [aB2_6]
        exact acc_step d L fl tab (wL L).val (2 * t1.val) (2 * k.val + 1) 1 _ hRB ⟨6, by decide⟩ ⟨2, by decide⟩ 32#32 rfl _ hwB_6 _ (k1_off42_form ⟨0, by decide⟩ _ _) _ _
      have aB2_8 : pair0_region.sl.v1943_9 d L tab t1 k r g1 g2 hR hin h5 = AccMath.accVec (rowF fl tab (wL L).val (2 * t1.val) (2 * k.val + 1)) (offF fl (wL L).val (2 * t1.val) (2 * k.val + 1)) 2 8 := by
        unfold pair0_region.sl.v1943_9; rw [aB2_7]
        exact acc_step d L fl tab (wL L).val (2 * t1.val) (2 * k.val + 1) 1 _ hRB ⟨7, by decide⟩ ⟨2, by decide⟩ 32#32 rfl _ hwB_7 _ (k1_off43_form ⟨0, by decide⟩ _ _) _ _
      have aB2_9 : pair0_region.sl.v1979_9 d L tab t1 k r g1 g2 hR hin h5 = AccMath.accVec (rowF fl tab (wL L).val (2 * t1.val) (2 * k.val + 1)) (offF fl (wL L).val (2 * t1.val) (2 * k.val + 1)) 2 9 := by
        unfold pair0_region.sl.v1979_9; rw [aB2_8]
        exact acc_step d L fl tab (wL L).val (2 * t1.val) (2 * k.val + 1) 1 _ hRB ⟨8, by decide⟩ ⟨2, by decide⟩ 32#32 rfl _ hwB_8 _ (k1_off44_form ⟨0, by decide⟩ _ _) _ _
      have aB2_10 : pair0_region.sl.v2015_9 d L tab t1 k r g1 g2 hR hin h5 = AccMath.accVec (rowF fl tab (wL L).val (2 * t1.val) (2 * k.val + 1)) (offF fl (wL L).val (2 * t1.val) (2 * k.val + 1)) 2 10 := by
        unfold pair0_region.sl.v2015_9; rw [aB2_9]
        exact acc_step d L fl tab (wL L).val (2 * t1.val) (2 * k.val + 1) 1 _ hRB ⟨9, by decide⟩ ⟨2, by decide⟩ 32#32 rfl _ hwB_9 _ (k1_off45_form ⟨0, by decide⟩ _ _) _ _
      have aB2_11 : pair0_region.sl.v2051_9 d L tab t1 k r g1 g2 hR hin h5 = AccMath.accVec (rowF fl tab (wL L).val (2 * t1.val) (2 * k.val + 1)) (offF fl (wL L).val (2 * t1.val) (2 * k.val + 1)) 2 11 := by
        unfold pair0_region.sl.v2051_9; rw [aB2_10]
        exact acc_step d L fl tab (wL L).val (2 * t1.val) (2 * k.val + 1) 1 _ hRB ⟨10, by decide⟩ ⟨2, by decide⟩ 32#32 rfl _ hwB_10 _ (k1_off46_form ⟨0, by decide⟩ _ _) _ _
      have aB2_12 : pair0_region.sl.v2087_9 d L tab t1 k r g1 g2 hR hin h5 = AccMath.accVec (rowF fl tab (wL L).val (2 * t1.val) (2 * k.val + 1)) (offF fl (wL L).val (2 * t1.val) (2 * k.val + 1)) 2 12 := by
        unfold pair0_region.sl.v2087_9; rw [aB2_11]
        exact acc_step d L fl tab (wL L).val (2 * t1.val) (2 * k.val + 1) 1 _ hRB ⟨11, by decide⟩ ⟨2, by decide⟩ 32#32 rfl _ hwB_11 _ (k1_off47_form ⟨0, by decide⟩ _ _) _ _
      have aB2_13 : pair0_region.sl.v2123_9 d L tab t1 k r g1 g2 hR hin h5 = AccMath.accVec (rowF fl tab (wL L).val (2 * t1.val) (2 * k.val + 1)) (offF fl (wL L).val (2 * t1.val) (2 * k.val + 1)) 2 13 := by
        unfold pair0_region.sl.v2123_9; rw [aB2_12]
        exact acc_step d L fl tab (wL L).val (2 * t1.val) (2 * k.val + 1) 1 _ hRB ⟨12, by decide⟩ ⟨2, by decide⟩ 32#32 rfl _ hwB_12 _ (k1_off48_form ⟨0, by decide⟩ _ _) _ _
      have aB2_14 : pair0_region.sl.v2159_9 d L tab t1 k r g1 g2 hR hin h5 = AccMath.accVec (rowF fl tab (wL L).val (2 * t1.val) (2 * k.val + 1)) (offF fl (wL L).val (2 * t1.val) (2 * k.val + 1)) 2 14 := by
        unfold pair0_region.sl.v2159_9; rw [aB2_13]
        exact acc_step d L fl tab (wL L).val (2 * t1.val) (2 * k.val + 1) 1 _ hRB ⟨13, by decide⟩ ⟨2, by decide⟩ 32#32 rfl _ hwB_13 _ (k1_off49_form ⟨0, by decide⟩ _ _) _ _
      have aB2_15 : pair0_region.sl.v2195_9 d L tab t1 k r g1 g2 hR hin h5 = AccMath.accVec (rowF fl tab (wL L).val (2 * t1.val) (2 * k.val + 1)) (offF fl (wL L).val (2 * t1.val) (2 * k.val + 1)) 2 15 := by
        unfold pair0_region.sl.v2195_9; rw [aB2_14]
        exact acc_step d L fl tab (wL L).val (2 * t1.val) (2 * k.val + 1) 1 _ hRB ⟨14, by decide⟩ ⟨2, by decide⟩ 32#32 rfl _ hwB_14 _ (k1_off50_form ⟨0, by decide⟩ _ _) _ _
      have aB2_16 : pair0_region.sl.v2231_9 d L tab t1 k r g1 g2 hR hin h5 = AccMath.accVec (rowF fl tab (wL L).val (2 * t1.val) (2 * k.val + 1)) (offF fl (wL L).val (2 * t1.val) (2 * k.val + 1)) 2 16 := by
        unfold pair0_region.sl.v2231_9; rw [aB2_15]
        exact acc_step d L fl tab (wL L).val (2 * t1.val) (2 * k.val + 1) 1 _ hRB ⟨15, by decide⟩ ⟨2, by decide⟩ 32#32 rfl _ hwB_15 _ (k1_off51_form ⟨0, by decide⟩ _ _) _ _
      have aB2_17 : pair0_region.sl.v1691_10 d L tab t1 k r g1 g2 hR hin h5 = AccMath.accVec (rowF fl tab (wL L).val (2 * t1.val) (2 * k.val + 1)) (offF fl (wL L).val (2 * t1.val) (2 * k.val + 1)) 2 17 := by
        unfold pair0_region.sl.v1691_10; rw [aB2_16]
        exact acc_step d L fl tab (wL L).val (2 * t1.val) (2 * k.val + 1) 1 _ hRB ⟨16, by decide⟩ ⟨2, by decide⟩ 32#32 rfl _ hwB_16 _ (k1_off36_form ⟨1, by decide⟩ _ _) _ _
      have aB2_18 : pair0_region.sl.v1727_10 d L tab t1 k r g1 g2 hR hin h5 = AccMath.accVec (rowF fl tab (wL L).val (2 * t1.val) (2 * k.val + 1)) (offF fl (wL L).val (2 * t1.val) (2 * k.val + 1)) 2 18 := by
        unfold pair0_region.sl.v1727_10; rw [aB2_17]
        exact acc_step d L fl tab (wL L).val (2 * t1.val) (2 * k.val + 1) 1 _ hRB ⟨17, by decide⟩ ⟨2, by decide⟩ 32#32 rfl _ hwB_17 _ (k1_off37_form ⟨1, by decide⟩ _ _) _ _
      have aB2_19 : pair0_region.sl.v1763_10 d L tab t1 k r g1 g2 hR hin h5 = AccMath.accVec (rowF fl tab (wL L).val (2 * t1.val) (2 * k.val + 1)) (offF fl (wL L).val (2 * t1.val) (2 * k.val + 1)) 2 19 := by
        unfold pair0_region.sl.v1763_10; rw [aB2_18]
        exact acc_step d L fl tab (wL L).val (2 * t1.val) (2 * k.val + 1) 1 _ hRB ⟨18, by decide⟩ ⟨2, by decide⟩ 32#32 rfl _ hwB_18 _ (k1_off38_form ⟨1, by decide⟩ _ _) _ _
      have aB2_20 : pair0_region.sl.v1799_10 d L tab t1 k r g1 g2 hR hin h5 = AccMath.accVec (rowF fl tab (wL L).val (2 * t1.val) (2 * k.val + 1)) (offF fl (wL L).val (2 * t1.val) (2 * k.val + 1)) 2 20 := by
        unfold pair0_region.sl.v1799_10; rw [aB2_19]
        exact acc_step d L fl tab (wL L).val (2 * t1.val) (2 * k.val + 1) 1 _ hRB ⟨19, by decide⟩ ⟨2, by decide⟩ 32#32 rfl _ hwB_19 _ (k1_off39_form ⟨1, by decide⟩ _ _) _ _
      have aB2_21 : pair0_region.sl.v1835_10 d L tab t1 k r g1 g2 hR hin h5 = AccMath.accVec (rowF fl tab (wL L).val (2 * t1.val) (2 * k.val + 1)) (offF fl (wL L).val (2 * t1.val) (2 * k.val + 1)) 2 21 := by
        unfold pair0_region.sl.v1835_10; rw [aB2_20]
        exact acc_step d L fl tab (wL L).val (2 * t1.val) (2 * k.val + 1) 1 _ hRB ⟨20, by decide⟩ ⟨2, by decide⟩ 32#32 rfl _ hwB_20 _ (k1_off40_form ⟨1, by decide⟩ _ _) _ _
      have aB2_22 : pair0_region.sl.v1871_10 d L tab t1 k r g1 g2 hR hin h5 = AccMath.accVec (rowF fl tab (wL L).val (2 * t1.val) (2 * k.val + 1)) (offF fl (wL L).val (2 * t1.val) (2 * k.val + 1)) 2 22 := by
        unfold pair0_region.sl.v1871_10; rw [aB2_21]
        exact acc_step d L fl tab (wL L).val (2 * t1.val) (2 * k.val + 1) 1 _ hRB ⟨21, by decide⟩ ⟨2, by decide⟩ 32#32 rfl _ hwB_21 _ (k1_off41_form ⟨1, by decide⟩ _ _) _ _
      have aB2_23 : pair0_region.sl.v1907_10 d L tab t1 k r g1 g2 hR hin h5 = AccMath.accVec (rowF fl tab (wL L).val (2 * t1.val) (2 * k.val + 1)) (offF fl (wL L).val (2 * t1.val) (2 * k.val + 1)) 2 23 := by
        unfold pair0_region.sl.v1907_10; rw [aB2_22]
        exact acc_step d L fl tab (wL L).val (2 * t1.val) (2 * k.val + 1) 1 _ hRB ⟨22, by decide⟩ ⟨2, by decide⟩ 32#32 rfl _ hwB_22 _ (k1_off42_form ⟨1, by decide⟩ _ _) _ _
      have aB2_24 : pair0_region.sl.v1943_10 d L tab t1 k r g1 g2 hR hin h5 = AccMath.accVec (rowF fl tab (wL L).val (2 * t1.val) (2 * k.val + 1)) (offF fl (wL L).val (2 * t1.val) (2 * k.val + 1)) 2 24 := by
        unfold pair0_region.sl.v1943_10; rw [aB2_23]
        exact acc_step d L fl tab (wL L).val (2 * t1.val) (2 * k.val + 1) 1 _ hRB ⟨23, by decide⟩ ⟨2, by decide⟩ 32#32 rfl _ hwB_23 _ (k1_off43_form ⟨1, by decide⟩ _ _) _ _
      have aB2_25 : pair0_region.sl.v1979_10 d L tab t1 k r g1 g2 hR hin h5 = AccMath.accVec (rowF fl tab (wL L).val (2 * t1.val) (2 * k.val + 1)) (offF fl (wL L).val (2 * t1.val) (2 * k.val + 1)) 2 25 := by
        unfold pair0_region.sl.v1979_10; rw [aB2_24]
        exact acc_step d L fl tab (wL L).val (2 * t1.val) (2 * k.val + 1) 1 _ hRB ⟨24, by decide⟩ ⟨2, by decide⟩ 32#32 rfl _ hwB_24 _ (k1_off44_form ⟨1, by decide⟩ _ _) _ _
      have aB2_26 : pair0_region.sl.v2015_10 d L tab t1 k r g1 g2 hR hin h5 = AccMath.accVec (rowF fl tab (wL L).val (2 * t1.val) (2 * k.val + 1)) (offF fl (wL L).val (2 * t1.val) (2 * k.val + 1)) 2 26 := by
        unfold pair0_region.sl.v2015_10; rw [aB2_25]
        exact acc_step d L fl tab (wL L).val (2 * t1.val) (2 * k.val + 1) 1 _ hRB ⟨25, by decide⟩ ⟨2, by decide⟩ 32#32 rfl _ hwB_25 _ (k1_off45_form ⟨1, by decide⟩ _ _) _ _
      have aB2_27 : pair0_region.sl.v2051_10 d L tab t1 k r g1 g2 hR hin h5 = AccMath.accVec (rowF fl tab (wL L).val (2 * t1.val) (2 * k.val + 1)) (offF fl (wL L).val (2 * t1.val) (2 * k.val + 1)) 2 27 := by
        unfold pair0_region.sl.v2051_10; rw [aB2_26]
        exact acc_step d L fl tab (wL L).val (2 * t1.val) (2 * k.val + 1) 1 _ hRB ⟨26, by decide⟩ ⟨2, by decide⟩ 32#32 rfl _ hwB_26 _ (k1_off46_form ⟨1, by decide⟩ _ _) _ _
      have aB2_28 : pair0_region.sl.v2087_10 d L tab t1 k r g1 g2 hR hin h5 = AccMath.accVec (rowF fl tab (wL L).val (2 * t1.val) (2 * k.val + 1)) (offF fl (wL L).val (2 * t1.val) (2 * k.val + 1)) 2 28 := by
        unfold pair0_region.sl.v2087_10; rw [aB2_27]
        exact acc_step d L fl tab (wL L).val (2 * t1.val) (2 * k.val + 1) 1 _ hRB ⟨27, by decide⟩ ⟨2, by decide⟩ 32#32 rfl _ hwB_27 _ (k1_off47_form ⟨1, by decide⟩ _ _) _ _
      have aB2_29 : pair0_region.sl.v2123_10 d L tab t1 k r g1 g2 hR hin h5 = AccMath.accVec (rowF fl tab (wL L).val (2 * t1.val) (2 * k.val + 1)) (offF fl (wL L).val (2 * t1.val) (2 * k.val + 1)) 2 29 := by
        unfold pair0_region.sl.v2123_10; rw [aB2_28]
        exact acc_step d L fl tab (wL L).val (2 * t1.val) (2 * k.val + 1) 1 _ hRB ⟨28, by decide⟩ ⟨2, by decide⟩ 32#32 rfl _ hwB_28 _ (k1_off48_form ⟨1, by decide⟩ _ _) _ _
      have aB2_30 : pair0_region.sl.v2159_10 d L tab t1 k r g1 g2 hR hin h5 = AccMath.accVec (rowF fl tab (wL L).val (2 * t1.val) (2 * k.val + 1)) (offF fl (wL L).val (2 * t1.val) (2 * k.val + 1)) 2 30 := by
        unfold pair0_region.sl.v2159_10; rw [aB2_29]
        exact acc_step d L fl tab (wL L).val (2 * t1.val) (2 * k.val + 1) 1 _ hRB ⟨29, by decide⟩ ⟨2, by decide⟩ 32#32 rfl _ hwB_29 _ (k1_off49_form ⟨1, by decide⟩ _ _) _ _
      have aB2_31 : pair0_region.sl.v2195_10 d L tab t1 k r g1 g2 hR hin h5 = AccMath.accVec (rowF fl tab (wL L).val (2 * t1.val) (2 * k.val + 1)) (offF fl (wL L).val (2 * t1.val) (2 * k.val + 1)) 2 31 := by
        unfold pair0_region.sl.v2195_10; rw [aB2_30]
        exact acc_step d L fl tab (wL L).val (2 * t1.val) (2 * k.val + 1) 1 _ hRB ⟨30, by decide⟩ ⟨2, by decide⟩ 32#32 rfl _ hwB_30 _ (k1_off50_form ⟨1, by decide⟩ _ _) _ _
      have aB2_32 : pair0_region.sl.v2231_10 d L tab t1 k r g1 g2 hR hin h5 = AccMath.accVec (rowF fl tab (wL L).val (2 * t1.val) (2 * k.val + 1)) (offF fl (wL L).val (2 * t1.val) (2 * k.val + 1)) 2 32 := by
        unfold pair0_region.sl.v2231_10; rw [aB2_31]
        exact acc_step d L fl tab (wL L).val (2 * t1.val) (2 * k.val + 1) 1 _ hRB ⟨31, by decide⟩ ⟨2, by decide⟩ 32#32 rfl _ hwB_31 _ (k1_off51_form ⟨1, by decide⟩ _ _) _ _
      have aB2_33 : pair0_region.sl.v1691_11 d L tab t1 k r g1 g2 hR hin h5 = AccMath.accVec (rowF fl tab (wL L).val (2 * t1.val) (2 * k.val + 1)) (offF fl (wL L).val (2 * t1.val) (2 * k.val + 1)) 2 33 := by
        unfold pair0_region.sl.v1691_11; rw [aB2_32]
        exact acc_step d L fl tab (wL L).val (2 * t1.val) (2 * k.val + 1) 1 _ hRB ⟨32, by decide⟩ ⟨2, by decide⟩ 32#32 rfl _ hwB_32 _ (k1_off36_form ⟨2, by decide⟩ _ _) _ _
      have aB2_34 : pair0_region.sl.v1727_11 d L tab t1 k r g1 g2 hR hin h5 = AccMath.accVec (rowF fl tab (wL L).val (2 * t1.val) (2 * k.val + 1)) (offF fl (wL L).val (2 * t1.val) (2 * k.val + 1)) 2 34 := by
        unfold pair0_region.sl.v1727_11; rw [aB2_33]
        exact acc_step d L fl tab (wL L).val (2 * t1.val) (2 * k.val + 1) 1 _ hRB ⟨33, by decide⟩ ⟨2, by decide⟩ 32#32 rfl _ hwB_33 _ (k1_off37_form ⟨2, by decide⟩ _ _) _ _
      have aB2_35 : pair0_region.sl.v1763_11 d L tab t1 k r g1 g2 hR hin h5 = AccMath.accVec (rowF fl tab (wL L).val (2 * t1.val) (2 * k.val + 1)) (offF fl (wL L).val (2 * t1.val) (2 * k.val + 1)) 2 35 := by
        unfold pair0_region.sl.v1763_11; rw [aB2_34]
        exact acc_step d L fl tab (wL L).val (2 * t1.val) (2 * k.val + 1) 1 _ hRB ⟨34, by decide⟩ ⟨2, by decide⟩ 32#32 rfl _ hwB_34 _ (k1_off38_form ⟨2, by decide⟩ _ _) _ _
      have aB2_36 : pair0_region.sl.v1799_11 d L tab t1 k r g1 g2 hR hin h5 = AccMath.accVec (rowF fl tab (wL L).val (2 * t1.val) (2 * k.val + 1)) (offF fl (wL L).val (2 * t1.val) (2 * k.val + 1)) 2 36 := by
        unfold pair0_region.sl.v1799_11; rw [aB2_35]
        exact acc_step d L fl tab (wL L).val (2 * t1.val) (2 * k.val + 1) 1 _ hRB ⟨35, by decide⟩ ⟨2, by decide⟩ 32#32 rfl _ hwB_35 _ (k1_off39_form ⟨2, by decide⟩ _ _) _ _
      have aB2_37 : pair0_region.sl.v1835_11 d L tab t1 k r g1 g2 hR hin h5 = AccMath.accVec (rowF fl tab (wL L).val (2 * t1.val) (2 * k.val + 1)) (offF fl (wL L).val (2 * t1.val) (2 * k.val + 1)) 2 37 := by
        unfold pair0_region.sl.v1835_11; rw [aB2_36]
        exact acc_step d L fl tab (wL L).val (2 * t1.val) (2 * k.val + 1) 1 _ hRB ⟨36, by decide⟩ ⟨2, by decide⟩ 32#32 rfl _ hwB_36 _ (k1_off40_form ⟨2, by decide⟩ _ _) _ _
      have aB2_38 : pair0_region.sl.v1871_11 d L tab t1 k r g1 g2 hR hin h5 = AccMath.accVec (rowF fl tab (wL L).val (2 * t1.val) (2 * k.val + 1)) (offF fl (wL L).val (2 * t1.val) (2 * k.val + 1)) 2 38 := by
        unfold pair0_region.sl.v1871_11; rw [aB2_37]
        exact acc_step d L fl tab (wL L).val (2 * t1.val) (2 * k.val + 1) 1 _ hRB ⟨37, by decide⟩ ⟨2, by decide⟩ 32#32 rfl _ hwB_37 _ (k1_off41_form ⟨2, by decide⟩ _ _) _ _
      have aB2_39 : pair0_region.sl.v1907_11 d L tab t1 k r g1 g2 hR hin h5 = AccMath.accVec (rowF fl tab (wL L).val (2 * t1.val) (2 * k.val + 1)) (offF fl (wL L).val (2 * t1.val) (2 * k.val + 1)) 2 39 := by
        unfold pair0_region.sl.v1907_11; rw [aB2_38]
        exact acc_step d L fl tab (wL L).val (2 * t1.val) (2 * k.val + 1) 1 _ hRB ⟨38, by decide⟩ ⟨2, by decide⟩ 32#32 rfl _ hwB_38 _ (k1_off42_form ⟨2, by decide⟩ _ _) _ _
      have aB2_40 : pair0_region.sl.v1943_11 d L tab t1 k r g1 g2 hR hin h5 = AccMath.accVec (rowF fl tab (wL L).val (2 * t1.val) (2 * k.val + 1)) (offF fl (wL L).val (2 * t1.val) (2 * k.val + 1)) 2 40 := by
        unfold pair0_region.sl.v1943_11; rw [aB2_39]
        exact acc_step d L fl tab (wL L).val (2 * t1.val) (2 * k.val + 1) 1 _ hRB ⟨39, by decide⟩ ⟨2, by decide⟩ 32#32 rfl _ hwB_39 _ (k1_off43_form ⟨2, by decide⟩ _ _) _ _
      have aB2_41 : pair0_region.sl.v1979_11 d L tab t1 k r g1 g2 hR hin h5 = AccMath.accVec (rowF fl tab (wL L).val (2 * t1.val) (2 * k.val + 1)) (offF fl (wL L).val (2 * t1.val) (2 * k.val + 1)) 2 41 := by
        unfold pair0_region.sl.v1979_11; rw [aB2_40]
        exact acc_step d L fl tab (wL L).val (2 * t1.val) (2 * k.val + 1) 1 _ hRB ⟨40, by decide⟩ ⟨2, by decide⟩ 32#32 rfl _ hwB_40 _ (k1_off44_form ⟨2, by decide⟩ _ _) _ _
      have aB2_42 : pair0_region.sl.v2015_11 d L tab t1 k r g1 g2 hR hin h5 = AccMath.accVec (rowF fl tab (wL L).val (2 * t1.val) (2 * k.val + 1)) (offF fl (wL L).val (2 * t1.val) (2 * k.val + 1)) 2 42 := by
        unfold pair0_region.sl.v2015_11; rw [aB2_41]
        exact acc_step d L fl tab (wL L).val (2 * t1.val) (2 * k.val + 1) 1 _ hRB ⟨41, by decide⟩ ⟨2, by decide⟩ 32#32 rfl _ hwB_41 _ (k1_off45_form ⟨2, by decide⟩ _ _) _ _
      have aB2_43 : pair0_region.sl.v2051_11 d L tab t1 k r g1 g2 hR hin h5 = AccMath.accVec (rowF fl tab (wL L).val (2 * t1.val) (2 * k.val + 1)) (offF fl (wL L).val (2 * t1.val) (2 * k.val + 1)) 2 43 := by
        unfold pair0_region.sl.v2051_11; rw [aB2_42]
        exact acc_step d L fl tab (wL L).val (2 * t1.val) (2 * k.val + 1) 1 _ hRB ⟨42, by decide⟩ ⟨2, by decide⟩ 32#32 rfl _ hwB_42 _ (k1_off46_form ⟨2, by decide⟩ _ _) _ _
      have aB2_44 : pair0_region.sl.v2087_11 d L tab t1 k r g1 g2 hR hin h5 = AccMath.accVec (rowF fl tab (wL L).val (2 * t1.val) (2 * k.val + 1)) (offF fl (wL L).val (2 * t1.val) (2 * k.val + 1)) 2 44 := by
        unfold pair0_region.sl.v2087_11; rw [aB2_43]
        exact acc_step d L fl tab (wL L).val (2 * t1.val) (2 * k.val + 1) 1 _ hRB ⟨43, by decide⟩ ⟨2, by decide⟩ 32#32 rfl _ hwB_43 _ (k1_off47_form ⟨2, by decide⟩ _ _) _ _
      have aB2_45 : pair0_region.sl.v2123_11 d L tab t1 k r g1 g2 hR hin h5 = AccMath.accVec (rowF fl tab (wL L).val (2 * t1.val) (2 * k.val + 1)) (offF fl (wL L).val (2 * t1.val) (2 * k.val + 1)) 2 45 := by
        unfold pair0_region.sl.v2123_11; rw [aB2_44]
        exact acc_step d L fl tab (wL L).val (2 * t1.val) (2 * k.val + 1) 1 _ hRB ⟨44, by decide⟩ ⟨2, by decide⟩ 32#32 rfl _ hwB_44 _ (k1_off48_form ⟨2, by decide⟩ _ _) _ _
      have aB2_46 : pair0_region.sl.v2159_11 d L tab t1 k r g1 g2 hR hin h5 = AccMath.accVec (rowF fl tab (wL L).val (2 * t1.val) (2 * k.val + 1)) (offF fl (wL L).val (2 * t1.val) (2 * k.val + 1)) 2 46 := by
        unfold pair0_region.sl.v2159_11; rw [aB2_45]
        exact acc_step d L fl tab (wL L).val (2 * t1.val) (2 * k.val + 1) 1 _ hRB ⟨45, by decide⟩ ⟨2, by decide⟩ 32#32 rfl _ hwB_45 _ (k1_off49_form ⟨2, by decide⟩ _ _) _ _
      have aB2_47 : pair0_region.sl.v2195_11 d L tab t1 k r g1 g2 hR hin h5 = AccMath.accVec (rowF fl tab (wL L).val (2 * t1.val) (2 * k.val + 1)) (offF fl (wL L).val (2 * t1.val) (2 * k.val + 1)) 2 47 := by
        unfold pair0_region.sl.v2195_11; rw [aB2_46]
        exact acc_step d L fl tab (wL L).val (2 * t1.val) (2 * k.val + 1) 1 _ hRB ⟨46, by decide⟩ ⟨2, by decide⟩ 32#32 rfl _ hwB_46 _ (k1_off50_form ⟨2, by decide⟩ _ _) _ _
      have aB2_48 : pair0_region.sl.v2231_11 d L tab t1 k r g1 g2 hR hin h5 = AccMath.accVec (rowF fl tab (wL L).val (2 * t1.val) (2 * k.val + 1)) (offF fl (wL L).val (2 * t1.val) (2 * k.val + 1)) 2 48 := by
        unfold pair0_region.sl.v2231_11; rw [aB2_47]
        exact acc_step d L fl tab (wL L).val (2 * t1.val) (2 * k.val + 1) 1 _ hRB ⟨47, by decide⟩ ⟨2, by decide⟩ 32#32 rfl _ hwB_47 _ (k1_off51_form ⟨2, by decide⟩ _ _) _ _
      have aB2_49 : pair0_region.sl.v1596_1 d L tab t1 k r g1 g2 hR hin h5 = AccMath.accVec (rowF fl tab (wL L).val (2 * t1.val) (2 * k.val + 1)) (offF fl (wL L).val (2 * t1.val) (2 * k.val + 1)) 2 49 := by
        unfold pair0_region.sl.v1596_1; rw [aB2_48]
        exact acc_step d L fl tab (wL L).val (2 * t1.val) (2 * k.val + 1) 1 _ hRB ⟨48, by decide⟩ ⟨2, by decide⟩ 32#32 rfl _ hwB_48 _ (k1_off53_form _ _) _ _
      have aB2_50 : pair0_region.sl.v1630_1 d L tab t1 k r g1 g2 hR hin h5 = AccMath.accVec (rowF fl tab (wL L).val (2 * t1.val) (2 * k.val + 1)) (offF fl (wL L).val (2 * t1.val) (2 * k.val + 1)) 2 50 := by
        unfold pair0_region.sl.v1630_1; rw [aB2_49]
        exact acc_step d L fl tab (wL L).val (2 * t1.val) (2 * k.val + 1) 1 _ hRB ⟨49, by decide⟩ ⟨2, by decide⟩ 32#32 rfl _ hwB_49 _ (k1_off54_form _ _) _ _
      have hPB2 : ∀ x : S1x1x16.Idx, pair0_region.sl.v1653_1 d L tab t1 k r g1 g2 hR hin h5 x = Spec.bagPartial fl tab (128 * (wL L).val + 16 * (2 * t1.val) + (2 * k.val + 1)) (16 * 2 + (x 2).val) 50 := fun x => by
        unfold pair0_region.sl.v1653_1; rw [aB2_50]; exact payload_ok fl tab (wL L).val (2 * t1.val) (2 * k.val + 1) ⟨2, by decide⟩ _ x
      have aB3_0 : pair0_region.sl.v1561_1 = AccMath.accVec (rowF fl tab (wL L).val (2 * t1.val) (2 * k.val + 1)) (offF fl (wL L).val (2 * t1.val) (2 * k.val + 1)) 3 0 := acc_zero fl tab (wL L).val (2 * t1.val) (2 * k.val + 1) 3
      have aB3_1 : pair0_region.sl.v1699_9 d L tab t1 k r g1 g2 hR hin h5 = AccMath.accVec (rowF fl tab (wL L).val (2 * t1.val) (2 * k.val + 1)) (offF fl (wL L).val (2 * t1.val) (2 * k.val + 1)) 3 1 := by
        unfold pair0_region.sl.v1699_9; rw [aB3_0]
        exact acc_step d L fl tab (wL L).val (2 * t1.val) (2 * k.val + 1) 1 _ hRB ⟨0, by decide⟩ ⟨3, by decide⟩ 48#32 rfl _ hwB_0 _ (k1_off36_form ⟨0, by decide⟩ _ _) _ _
      have aB3_2 : pair0_region.sl.v1735_9 d L tab t1 k r g1 g2 hR hin h5 = AccMath.accVec (rowF fl tab (wL L).val (2 * t1.val) (2 * k.val + 1)) (offF fl (wL L).val (2 * t1.val) (2 * k.val + 1)) 3 2 := by
        unfold pair0_region.sl.v1735_9; rw [aB3_1]
        exact acc_step d L fl tab (wL L).val (2 * t1.val) (2 * k.val + 1) 1 _ hRB ⟨1, by decide⟩ ⟨3, by decide⟩ 48#32 rfl _ hwB_1 _ (k1_off37_form ⟨0, by decide⟩ _ _) _ _
      have aB3_3 : pair0_region.sl.v1771_9 d L tab t1 k r g1 g2 hR hin h5 = AccMath.accVec (rowF fl tab (wL L).val (2 * t1.val) (2 * k.val + 1)) (offF fl (wL L).val (2 * t1.val) (2 * k.val + 1)) 3 3 := by
        unfold pair0_region.sl.v1771_9; rw [aB3_2]
        exact acc_step d L fl tab (wL L).val (2 * t1.val) (2 * k.val + 1) 1 _ hRB ⟨2, by decide⟩ ⟨3, by decide⟩ 48#32 rfl _ hwB_2 _ (k1_off38_form ⟨0, by decide⟩ _ _) _ _
      have aB3_4 : pair0_region.sl.v1807_9 d L tab t1 k r g1 g2 hR hin h5 = AccMath.accVec (rowF fl tab (wL L).val (2 * t1.val) (2 * k.val + 1)) (offF fl (wL L).val (2 * t1.val) (2 * k.val + 1)) 3 4 := by
        unfold pair0_region.sl.v1807_9; rw [aB3_3]
        exact acc_step d L fl tab (wL L).val (2 * t1.val) (2 * k.val + 1) 1 _ hRB ⟨3, by decide⟩ ⟨3, by decide⟩ 48#32 rfl _ hwB_3 _ (k1_off39_form ⟨0, by decide⟩ _ _) _ _
      have aB3_5 : pair0_region.sl.v1843_9 d L tab t1 k r g1 g2 hR hin h5 = AccMath.accVec (rowF fl tab (wL L).val (2 * t1.val) (2 * k.val + 1)) (offF fl (wL L).val (2 * t1.val) (2 * k.val + 1)) 3 5 := by
        unfold pair0_region.sl.v1843_9; rw [aB3_4]
        exact acc_step d L fl tab (wL L).val (2 * t1.val) (2 * k.val + 1) 1 _ hRB ⟨4, by decide⟩ ⟨3, by decide⟩ 48#32 rfl _ hwB_4 _ (k1_off40_form ⟨0, by decide⟩ _ _) _ _
      have aB3_6 : pair0_region.sl.v1879_9 d L tab t1 k r g1 g2 hR hin h5 = AccMath.accVec (rowF fl tab (wL L).val (2 * t1.val) (2 * k.val + 1)) (offF fl (wL L).val (2 * t1.val) (2 * k.val + 1)) 3 6 := by
        unfold pair0_region.sl.v1879_9; rw [aB3_5]
        exact acc_step d L fl tab (wL L).val (2 * t1.val) (2 * k.val + 1) 1 _ hRB ⟨5, by decide⟩ ⟨3, by decide⟩ 48#32 rfl _ hwB_5 _ (k1_off41_form ⟨0, by decide⟩ _ _) _ _
      have aB3_7 : pair0_region.sl.v1915_9 d L tab t1 k r g1 g2 hR hin h5 = AccMath.accVec (rowF fl tab (wL L).val (2 * t1.val) (2 * k.val + 1)) (offF fl (wL L).val (2 * t1.val) (2 * k.val + 1)) 3 7 := by
        unfold pair0_region.sl.v1915_9; rw [aB3_6]
        exact acc_step d L fl tab (wL L).val (2 * t1.val) (2 * k.val + 1) 1 _ hRB ⟨6, by decide⟩ ⟨3, by decide⟩ 48#32 rfl _ hwB_6 _ (k1_off42_form ⟨0, by decide⟩ _ _) _ _
      have aB3_8 : pair0_region.sl.v1951_9 d L tab t1 k r g1 g2 hR hin h5 = AccMath.accVec (rowF fl tab (wL L).val (2 * t1.val) (2 * k.val + 1)) (offF fl (wL L).val (2 * t1.val) (2 * k.val + 1)) 3 8 := by
        unfold pair0_region.sl.v1951_9; rw [aB3_7]
        exact acc_step d L fl tab (wL L).val (2 * t1.val) (2 * k.val + 1) 1 _ hRB ⟨7, by decide⟩ ⟨3, by decide⟩ 48#32 rfl _ hwB_7 _ (k1_off43_form ⟨0, by decide⟩ _ _) _ _
      have aB3_9 : pair0_region.sl.v1987_9 d L tab t1 k r g1 g2 hR hin h5 = AccMath.accVec (rowF fl tab (wL L).val (2 * t1.val) (2 * k.val + 1)) (offF fl (wL L).val (2 * t1.val) (2 * k.val + 1)) 3 9 := by
        unfold pair0_region.sl.v1987_9; rw [aB3_8]
        exact acc_step d L fl tab (wL L).val (2 * t1.val) (2 * k.val + 1) 1 _ hRB ⟨8, by decide⟩ ⟨3, by decide⟩ 48#32 rfl _ hwB_8 _ (k1_off44_form ⟨0, by decide⟩ _ _) _ _
      have aB3_10 : pair0_region.sl.v2023_9 d L tab t1 k r g1 g2 hR hin h5 = AccMath.accVec (rowF fl tab (wL L).val (2 * t1.val) (2 * k.val + 1)) (offF fl (wL L).val (2 * t1.val) (2 * k.val + 1)) 3 10 := by
        unfold pair0_region.sl.v2023_9; rw [aB3_9]
        exact acc_step d L fl tab (wL L).val (2 * t1.val) (2 * k.val + 1) 1 _ hRB ⟨9, by decide⟩ ⟨3, by decide⟩ 48#32 rfl _ hwB_9 _ (k1_off45_form ⟨0, by decide⟩ _ _) _ _
      have aB3_11 : pair0_region.sl.v2059_9 d L tab t1 k r g1 g2 hR hin h5 = AccMath.accVec (rowF fl tab (wL L).val (2 * t1.val) (2 * k.val + 1)) (offF fl (wL L).val (2 * t1.val) (2 * k.val + 1)) 3 11 := by
        unfold pair0_region.sl.v2059_9; rw [aB3_10]
        exact acc_step d L fl tab (wL L).val (2 * t1.val) (2 * k.val + 1) 1 _ hRB ⟨10, by decide⟩ ⟨3, by decide⟩ 48#32 rfl _ hwB_10 _ (k1_off46_form ⟨0, by decide⟩ _ _) _ _
      have aB3_12 : pair0_region.sl.v2095_9 d L tab t1 k r g1 g2 hR hin h5 = AccMath.accVec (rowF fl tab (wL L).val (2 * t1.val) (2 * k.val + 1)) (offF fl (wL L).val (2 * t1.val) (2 * k.val + 1)) 3 12 := by
        unfold pair0_region.sl.v2095_9; rw [aB3_11]
        exact acc_step d L fl tab (wL L).val (2 * t1.val) (2 * k.val + 1) 1 _ hRB ⟨11, by decide⟩ ⟨3, by decide⟩ 48#32 rfl _ hwB_11 _ (k1_off47_form ⟨0, by decide⟩ _ _) _ _
      have aB3_13 : pair0_region.sl.v2131_9 d L tab t1 k r g1 g2 hR hin h5 = AccMath.accVec (rowF fl tab (wL L).val (2 * t1.val) (2 * k.val + 1)) (offF fl (wL L).val (2 * t1.val) (2 * k.val + 1)) 3 13 := by
        unfold pair0_region.sl.v2131_9; rw [aB3_12]
        exact acc_step d L fl tab (wL L).val (2 * t1.val) (2 * k.val + 1) 1 _ hRB ⟨12, by decide⟩ ⟨3, by decide⟩ 48#32 rfl _ hwB_12 _ (k1_off48_form ⟨0, by decide⟩ _ _) _ _
      have aB3_14 : pair0_region.sl.v2167_9 d L tab t1 k r g1 g2 hR hin h5 = AccMath.accVec (rowF fl tab (wL L).val (2 * t1.val) (2 * k.val + 1)) (offF fl (wL L).val (2 * t1.val) (2 * k.val + 1)) 3 14 := by
        unfold pair0_region.sl.v2167_9; rw [aB3_13]
        exact acc_step d L fl tab (wL L).val (2 * t1.val) (2 * k.val + 1) 1 _ hRB ⟨13, by decide⟩ ⟨3, by decide⟩ 48#32 rfl _ hwB_13 _ (k1_off49_form ⟨0, by decide⟩ _ _) _ _
      have aB3_15 : pair0_region.sl.v2203_9 d L tab t1 k r g1 g2 hR hin h5 = AccMath.accVec (rowF fl tab (wL L).val (2 * t1.val) (2 * k.val + 1)) (offF fl (wL L).val (2 * t1.val) (2 * k.val + 1)) 3 15 := by
        unfold pair0_region.sl.v2203_9; rw [aB3_14]
        exact acc_step d L fl tab (wL L).val (2 * t1.val) (2 * k.val + 1) 1 _ hRB ⟨14, by decide⟩ ⟨3, by decide⟩ 48#32 rfl _ hwB_14 _ (k1_off50_form ⟨0, by decide⟩ _ _) _ _
      have aB3_16 : pair0_region.sl.v2239_9 d L tab t1 k r g1 g2 hR hin h5 = AccMath.accVec (rowF fl tab (wL L).val (2 * t1.val) (2 * k.val + 1)) (offF fl (wL L).val (2 * t1.val) (2 * k.val + 1)) 3 16 := by
        unfold pair0_region.sl.v2239_9; rw [aB3_15]
        exact acc_step d L fl tab (wL L).val (2 * t1.val) (2 * k.val + 1) 1 _ hRB ⟨15, by decide⟩ ⟨3, by decide⟩ 48#32 rfl _ hwB_15 _ (k1_off51_form ⟨0, by decide⟩ _ _) _ _
      have aB3_17 : pair0_region.sl.v1699_10 d L tab t1 k r g1 g2 hR hin h5 = AccMath.accVec (rowF fl tab (wL L).val (2 * t1.val) (2 * k.val + 1)) (offF fl (wL L).val (2 * t1.val) (2 * k.val + 1)) 3 17 := by
        unfold pair0_region.sl.v1699_10; rw [aB3_16]
        exact acc_step d L fl tab (wL L).val (2 * t1.val) (2 * k.val + 1) 1 _ hRB ⟨16, by decide⟩ ⟨3, by decide⟩ 48#32 rfl _ hwB_16 _ (k1_off36_form ⟨1, by decide⟩ _ _) _ _
      have aB3_18 : pair0_region.sl.v1735_10 d L tab t1 k r g1 g2 hR hin h5 = AccMath.accVec (rowF fl tab (wL L).val (2 * t1.val) (2 * k.val + 1)) (offF fl (wL L).val (2 * t1.val) (2 * k.val + 1)) 3 18 := by
        unfold pair0_region.sl.v1735_10; rw [aB3_17]
        exact acc_step d L fl tab (wL L).val (2 * t1.val) (2 * k.val + 1) 1 _ hRB ⟨17, by decide⟩ ⟨3, by decide⟩ 48#32 rfl _ hwB_17 _ (k1_off37_form ⟨1, by decide⟩ _ _) _ _
      have aB3_19 : pair0_region.sl.v1771_10 d L tab t1 k r g1 g2 hR hin h5 = AccMath.accVec (rowF fl tab (wL L).val (2 * t1.val) (2 * k.val + 1)) (offF fl (wL L).val (2 * t1.val) (2 * k.val + 1)) 3 19 := by
        unfold pair0_region.sl.v1771_10; rw [aB3_18]
        exact acc_step d L fl tab (wL L).val (2 * t1.val) (2 * k.val + 1) 1 _ hRB ⟨18, by decide⟩ ⟨3, by decide⟩ 48#32 rfl _ hwB_18 _ (k1_off38_form ⟨1, by decide⟩ _ _) _ _
      have aB3_20 : pair0_region.sl.v1807_10 d L tab t1 k r g1 g2 hR hin h5 = AccMath.accVec (rowF fl tab (wL L).val (2 * t1.val) (2 * k.val + 1)) (offF fl (wL L).val (2 * t1.val) (2 * k.val + 1)) 3 20 := by
        unfold pair0_region.sl.v1807_10; rw [aB3_19]
        exact acc_step d L fl tab (wL L).val (2 * t1.val) (2 * k.val + 1) 1 _ hRB ⟨19, by decide⟩ ⟨3, by decide⟩ 48#32 rfl _ hwB_19 _ (k1_off39_form ⟨1, by decide⟩ _ _) _ _
      have aB3_21 : pair0_region.sl.v1843_10 d L tab t1 k r g1 g2 hR hin h5 = AccMath.accVec (rowF fl tab (wL L).val (2 * t1.val) (2 * k.val + 1)) (offF fl (wL L).val (2 * t1.val) (2 * k.val + 1)) 3 21 := by
        unfold pair0_region.sl.v1843_10; rw [aB3_20]
        exact acc_step d L fl tab (wL L).val (2 * t1.val) (2 * k.val + 1) 1 _ hRB ⟨20, by decide⟩ ⟨3, by decide⟩ 48#32 rfl _ hwB_20 _ (k1_off40_form ⟨1, by decide⟩ _ _) _ _
      have aB3_22 : pair0_region.sl.v1879_10 d L tab t1 k r g1 g2 hR hin h5 = AccMath.accVec (rowF fl tab (wL L).val (2 * t1.val) (2 * k.val + 1)) (offF fl (wL L).val (2 * t1.val) (2 * k.val + 1)) 3 22 := by
        unfold pair0_region.sl.v1879_10; rw [aB3_21]
        exact acc_step d L fl tab (wL L).val (2 * t1.val) (2 * k.val + 1) 1 _ hRB ⟨21, by decide⟩ ⟨3, by decide⟩ 48#32 rfl _ hwB_21 _ (k1_off41_form ⟨1, by decide⟩ _ _) _ _
      have aB3_23 : pair0_region.sl.v1915_10 d L tab t1 k r g1 g2 hR hin h5 = AccMath.accVec (rowF fl tab (wL L).val (2 * t1.val) (2 * k.val + 1)) (offF fl (wL L).val (2 * t1.val) (2 * k.val + 1)) 3 23 := by
        unfold pair0_region.sl.v1915_10; rw [aB3_22]
        exact acc_step d L fl tab (wL L).val (2 * t1.val) (2 * k.val + 1) 1 _ hRB ⟨22, by decide⟩ ⟨3, by decide⟩ 48#32 rfl _ hwB_22 _ (k1_off42_form ⟨1, by decide⟩ _ _) _ _
      have aB3_24 : pair0_region.sl.v1951_10 d L tab t1 k r g1 g2 hR hin h5 = AccMath.accVec (rowF fl tab (wL L).val (2 * t1.val) (2 * k.val + 1)) (offF fl (wL L).val (2 * t1.val) (2 * k.val + 1)) 3 24 := by
        unfold pair0_region.sl.v1951_10; rw [aB3_23]
        exact acc_step d L fl tab (wL L).val (2 * t1.val) (2 * k.val + 1) 1 _ hRB ⟨23, by decide⟩ ⟨3, by decide⟩ 48#32 rfl _ hwB_23 _ (k1_off43_form ⟨1, by decide⟩ _ _) _ _
      have aB3_25 : pair0_region.sl.v1987_10 d L tab t1 k r g1 g2 hR hin h5 = AccMath.accVec (rowF fl tab (wL L).val (2 * t1.val) (2 * k.val + 1)) (offF fl (wL L).val (2 * t1.val) (2 * k.val + 1)) 3 25 := by
        unfold pair0_region.sl.v1987_10; rw [aB3_24]
        exact acc_step d L fl tab (wL L).val (2 * t1.val) (2 * k.val + 1) 1 _ hRB ⟨24, by decide⟩ ⟨3, by decide⟩ 48#32 rfl _ hwB_24 _ (k1_off44_form ⟨1, by decide⟩ _ _) _ _
      have aB3_26 : pair0_region.sl.v2023_10 d L tab t1 k r g1 g2 hR hin h5 = AccMath.accVec (rowF fl tab (wL L).val (2 * t1.val) (2 * k.val + 1)) (offF fl (wL L).val (2 * t1.val) (2 * k.val + 1)) 3 26 := by
        unfold pair0_region.sl.v2023_10; rw [aB3_25]
        exact acc_step d L fl tab (wL L).val (2 * t1.val) (2 * k.val + 1) 1 _ hRB ⟨25, by decide⟩ ⟨3, by decide⟩ 48#32 rfl _ hwB_25 _ (k1_off45_form ⟨1, by decide⟩ _ _) _ _
      have aB3_27 : pair0_region.sl.v2059_10 d L tab t1 k r g1 g2 hR hin h5 = AccMath.accVec (rowF fl tab (wL L).val (2 * t1.val) (2 * k.val + 1)) (offF fl (wL L).val (2 * t1.val) (2 * k.val + 1)) 3 27 := by
        unfold pair0_region.sl.v2059_10; rw [aB3_26]
        exact acc_step d L fl tab (wL L).val (2 * t1.val) (2 * k.val + 1) 1 _ hRB ⟨26, by decide⟩ ⟨3, by decide⟩ 48#32 rfl _ hwB_26 _ (k1_off46_form ⟨1, by decide⟩ _ _) _ _
      have aB3_28 : pair0_region.sl.v2095_10 d L tab t1 k r g1 g2 hR hin h5 = AccMath.accVec (rowF fl tab (wL L).val (2 * t1.val) (2 * k.val + 1)) (offF fl (wL L).val (2 * t1.val) (2 * k.val + 1)) 3 28 := by
        unfold pair0_region.sl.v2095_10; rw [aB3_27]
        exact acc_step d L fl tab (wL L).val (2 * t1.val) (2 * k.val + 1) 1 _ hRB ⟨27, by decide⟩ ⟨3, by decide⟩ 48#32 rfl _ hwB_27 _ (k1_off47_form ⟨1, by decide⟩ _ _) _ _
      have aB3_29 : pair0_region.sl.v2131_10 d L tab t1 k r g1 g2 hR hin h5 = AccMath.accVec (rowF fl tab (wL L).val (2 * t1.val) (2 * k.val + 1)) (offF fl (wL L).val (2 * t1.val) (2 * k.val + 1)) 3 29 := by
        unfold pair0_region.sl.v2131_10; rw [aB3_28]
        exact acc_step d L fl tab (wL L).val (2 * t1.val) (2 * k.val + 1) 1 _ hRB ⟨28, by decide⟩ ⟨3, by decide⟩ 48#32 rfl _ hwB_28 _ (k1_off48_form ⟨1, by decide⟩ _ _) _ _
      have aB3_30 : pair0_region.sl.v2167_10 d L tab t1 k r g1 g2 hR hin h5 = AccMath.accVec (rowF fl tab (wL L).val (2 * t1.val) (2 * k.val + 1)) (offF fl (wL L).val (2 * t1.val) (2 * k.val + 1)) 3 30 := by
        unfold pair0_region.sl.v2167_10; rw [aB3_29]
        exact acc_step d L fl tab (wL L).val (2 * t1.val) (2 * k.val + 1) 1 _ hRB ⟨29, by decide⟩ ⟨3, by decide⟩ 48#32 rfl _ hwB_29 _ (k1_off49_form ⟨1, by decide⟩ _ _) _ _
      have aB3_31 : pair0_region.sl.v2203_10 d L tab t1 k r g1 g2 hR hin h5 = AccMath.accVec (rowF fl tab (wL L).val (2 * t1.val) (2 * k.val + 1)) (offF fl (wL L).val (2 * t1.val) (2 * k.val + 1)) 3 31 := by
        unfold pair0_region.sl.v2203_10; rw [aB3_30]
        exact acc_step d L fl tab (wL L).val (2 * t1.val) (2 * k.val + 1) 1 _ hRB ⟨30, by decide⟩ ⟨3, by decide⟩ 48#32 rfl _ hwB_30 _ (k1_off50_form ⟨1, by decide⟩ _ _) _ _
      have aB3_32 : pair0_region.sl.v2239_10 d L tab t1 k r g1 g2 hR hin h5 = AccMath.accVec (rowF fl tab (wL L).val (2 * t1.val) (2 * k.val + 1)) (offF fl (wL L).val (2 * t1.val) (2 * k.val + 1)) 3 32 := by
        unfold pair0_region.sl.v2239_10; rw [aB3_31]
        exact acc_step d L fl tab (wL L).val (2 * t1.val) (2 * k.val + 1) 1 _ hRB ⟨31, by decide⟩ ⟨3, by decide⟩ 48#32 rfl _ hwB_31 _ (k1_off51_form ⟨1, by decide⟩ _ _) _ _
      have aB3_33 : pair0_region.sl.v1699_11 d L tab t1 k r g1 g2 hR hin h5 = AccMath.accVec (rowF fl tab (wL L).val (2 * t1.val) (2 * k.val + 1)) (offF fl (wL L).val (2 * t1.val) (2 * k.val + 1)) 3 33 := by
        unfold pair0_region.sl.v1699_11; rw [aB3_32]
        exact acc_step d L fl tab (wL L).val (2 * t1.val) (2 * k.val + 1) 1 _ hRB ⟨32, by decide⟩ ⟨3, by decide⟩ 48#32 rfl _ hwB_32 _ (k1_off36_form ⟨2, by decide⟩ _ _) _ _
      have aB3_34 : pair0_region.sl.v1735_11 d L tab t1 k r g1 g2 hR hin h5 = AccMath.accVec (rowF fl tab (wL L).val (2 * t1.val) (2 * k.val + 1)) (offF fl (wL L).val (2 * t1.val) (2 * k.val + 1)) 3 34 := by
        unfold pair0_region.sl.v1735_11; rw [aB3_33]
        exact acc_step d L fl tab (wL L).val (2 * t1.val) (2 * k.val + 1) 1 _ hRB ⟨33, by decide⟩ ⟨3, by decide⟩ 48#32 rfl _ hwB_33 _ (k1_off37_form ⟨2, by decide⟩ _ _) _ _
      have aB3_35 : pair0_region.sl.v1771_11 d L tab t1 k r g1 g2 hR hin h5 = AccMath.accVec (rowF fl tab (wL L).val (2 * t1.val) (2 * k.val + 1)) (offF fl (wL L).val (2 * t1.val) (2 * k.val + 1)) 3 35 := by
        unfold pair0_region.sl.v1771_11; rw [aB3_34]
        exact acc_step d L fl tab (wL L).val (2 * t1.val) (2 * k.val + 1) 1 _ hRB ⟨34, by decide⟩ ⟨3, by decide⟩ 48#32 rfl _ hwB_34 _ (k1_off38_form ⟨2, by decide⟩ _ _) _ _
      have aB3_36 : pair0_region.sl.v1807_11 d L tab t1 k r g1 g2 hR hin h5 = AccMath.accVec (rowF fl tab (wL L).val (2 * t1.val) (2 * k.val + 1)) (offF fl (wL L).val (2 * t1.val) (2 * k.val + 1)) 3 36 := by
        unfold pair0_region.sl.v1807_11; rw [aB3_35]
        exact acc_step d L fl tab (wL L).val (2 * t1.val) (2 * k.val + 1) 1 _ hRB ⟨35, by decide⟩ ⟨3, by decide⟩ 48#32 rfl _ hwB_35 _ (k1_off39_form ⟨2, by decide⟩ _ _) _ _
      have aB3_37 : pair0_region.sl.v1843_11 d L tab t1 k r g1 g2 hR hin h5 = AccMath.accVec (rowF fl tab (wL L).val (2 * t1.val) (2 * k.val + 1)) (offF fl (wL L).val (2 * t1.val) (2 * k.val + 1)) 3 37 := by
        unfold pair0_region.sl.v1843_11; rw [aB3_36]
        exact acc_step d L fl tab (wL L).val (2 * t1.val) (2 * k.val + 1) 1 _ hRB ⟨36, by decide⟩ ⟨3, by decide⟩ 48#32 rfl _ hwB_36 _ (k1_off40_form ⟨2, by decide⟩ _ _) _ _
      have aB3_38 : pair0_region.sl.v1879_11 d L tab t1 k r g1 g2 hR hin h5 = AccMath.accVec (rowF fl tab (wL L).val (2 * t1.val) (2 * k.val + 1)) (offF fl (wL L).val (2 * t1.val) (2 * k.val + 1)) 3 38 := by
        unfold pair0_region.sl.v1879_11; rw [aB3_37]
        exact acc_step d L fl tab (wL L).val (2 * t1.val) (2 * k.val + 1) 1 _ hRB ⟨37, by decide⟩ ⟨3, by decide⟩ 48#32 rfl _ hwB_37 _ (k1_off41_form ⟨2, by decide⟩ _ _) _ _
      have aB3_39 : pair0_region.sl.v1915_11 d L tab t1 k r g1 g2 hR hin h5 = AccMath.accVec (rowF fl tab (wL L).val (2 * t1.val) (2 * k.val + 1)) (offF fl (wL L).val (2 * t1.val) (2 * k.val + 1)) 3 39 := by
        unfold pair0_region.sl.v1915_11; rw [aB3_38]
        exact acc_step d L fl tab (wL L).val (2 * t1.val) (2 * k.val + 1) 1 _ hRB ⟨38, by decide⟩ ⟨3, by decide⟩ 48#32 rfl _ hwB_38 _ (k1_off42_form ⟨2, by decide⟩ _ _) _ _
      have aB3_40 : pair0_region.sl.v1951_11 d L tab t1 k r g1 g2 hR hin h5 = AccMath.accVec (rowF fl tab (wL L).val (2 * t1.val) (2 * k.val + 1)) (offF fl (wL L).val (2 * t1.val) (2 * k.val + 1)) 3 40 := by
        unfold pair0_region.sl.v1951_11; rw [aB3_39]
        exact acc_step d L fl tab (wL L).val (2 * t1.val) (2 * k.val + 1) 1 _ hRB ⟨39, by decide⟩ ⟨3, by decide⟩ 48#32 rfl _ hwB_39 _ (k1_off43_form ⟨2, by decide⟩ _ _) _ _
      have aB3_41 : pair0_region.sl.v1987_11 d L tab t1 k r g1 g2 hR hin h5 = AccMath.accVec (rowF fl tab (wL L).val (2 * t1.val) (2 * k.val + 1)) (offF fl (wL L).val (2 * t1.val) (2 * k.val + 1)) 3 41 := by
        unfold pair0_region.sl.v1987_11; rw [aB3_40]
        exact acc_step d L fl tab (wL L).val (2 * t1.val) (2 * k.val + 1) 1 _ hRB ⟨40, by decide⟩ ⟨3, by decide⟩ 48#32 rfl _ hwB_40 _ (k1_off44_form ⟨2, by decide⟩ _ _) _ _
      have aB3_42 : pair0_region.sl.v2023_11 d L tab t1 k r g1 g2 hR hin h5 = AccMath.accVec (rowF fl tab (wL L).val (2 * t1.val) (2 * k.val + 1)) (offF fl (wL L).val (2 * t1.val) (2 * k.val + 1)) 3 42 := by
        unfold pair0_region.sl.v2023_11; rw [aB3_41]
        exact acc_step d L fl tab (wL L).val (2 * t1.val) (2 * k.val + 1) 1 _ hRB ⟨41, by decide⟩ ⟨3, by decide⟩ 48#32 rfl _ hwB_41 _ (k1_off45_form ⟨2, by decide⟩ _ _) _ _
      have aB3_43 : pair0_region.sl.v2059_11 d L tab t1 k r g1 g2 hR hin h5 = AccMath.accVec (rowF fl tab (wL L).val (2 * t1.val) (2 * k.val + 1)) (offF fl (wL L).val (2 * t1.val) (2 * k.val + 1)) 3 43 := by
        unfold pair0_region.sl.v2059_11; rw [aB3_42]
        exact acc_step d L fl tab (wL L).val (2 * t1.val) (2 * k.val + 1) 1 _ hRB ⟨42, by decide⟩ ⟨3, by decide⟩ 48#32 rfl _ hwB_42 _ (k1_off46_form ⟨2, by decide⟩ _ _) _ _
      have aB3_44 : pair0_region.sl.v2095_11 d L tab t1 k r g1 g2 hR hin h5 = AccMath.accVec (rowF fl tab (wL L).val (2 * t1.val) (2 * k.val + 1)) (offF fl (wL L).val (2 * t1.val) (2 * k.val + 1)) 3 44 := by
        unfold pair0_region.sl.v2095_11; rw [aB3_43]
        exact acc_step d L fl tab (wL L).val (2 * t1.val) (2 * k.val + 1) 1 _ hRB ⟨43, by decide⟩ ⟨3, by decide⟩ 48#32 rfl _ hwB_43 _ (k1_off47_form ⟨2, by decide⟩ _ _) _ _
      have aB3_45 : pair0_region.sl.v2131_11 d L tab t1 k r g1 g2 hR hin h5 = AccMath.accVec (rowF fl tab (wL L).val (2 * t1.val) (2 * k.val + 1)) (offF fl (wL L).val (2 * t1.val) (2 * k.val + 1)) 3 45 := by
        unfold pair0_region.sl.v2131_11; rw [aB3_44]
        exact acc_step d L fl tab (wL L).val (2 * t1.val) (2 * k.val + 1) 1 _ hRB ⟨44, by decide⟩ ⟨3, by decide⟩ 48#32 rfl _ hwB_44 _ (k1_off48_form ⟨2, by decide⟩ _ _) _ _
      have aB3_46 : pair0_region.sl.v2167_11 d L tab t1 k r g1 g2 hR hin h5 = AccMath.accVec (rowF fl tab (wL L).val (2 * t1.val) (2 * k.val + 1)) (offF fl (wL L).val (2 * t1.val) (2 * k.val + 1)) 3 46 := by
        unfold pair0_region.sl.v2167_11; rw [aB3_45]
        exact acc_step d L fl tab (wL L).val (2 * t1.val) (2 * k.val + 1) 1 _ hRB ⟨45, by decide⟩ ⟨3, by decide⟩ 48#32 rfl _ hwB_45 _ (k1_off49_form ⟨2, by decide⟩ _ _) _ _
      have aB3_47 : pair0_region.sl.v2203_11 d L tab t1 k r g1 g2 hR hin h5 = AccMath.accVec (rowF fl tab (wL L).val (2 * t1.val) (2 * k.val + 1)) (offF fl (wL L).val (2 * t1.val) (2 * k.val + 1)) 3 47 := by
        unfold pair0_region.sl.v2203_11; rw [aB3_46]
        exact acc_step d L fl tab (wL L).val (2 * t1.val) (2 * k.val + 1) 1 _ hRB ⟨46, by decide⟩ ⟨3, by decide⟩ 48#32 rfl _ hwB_46 _ (k1_off50_form ⟨2, by decide⟩ _ _) _ _
      have aB3_48 : pair0_region.sl.v2239_11 d L tab t1 k r g1 g2 hR hin h5 = AccMath.accVec (rowF fl tab (wL L).val (2 * t1.val) (2 * k.val + 1)) (offF fl (wL L).val (2 * t1.val) (2 * k.val + 1)) 3 48 := by
        unfold pair0_region.sl.v2239_11; rw [aB3_47]
        exact acc_step d L fl tab (wL L).val (2 * t1.val) (2 * k.val + 1) 1 _ hRB ⟨47, by decide⟩ ⟨3, by decide⟩ 48#32 rfl _ hwB_47 _ (k1_off51_form ⟨2, by decide⟩ _ _) _ _
      have aB3_49 : pair0_region.sl.v1604_1 d L tab t1 k r g1 g2 hR hin h5 = AccMath.accVec (rowF fl tab (wL L).val (2 * t1.val) (2 * k.val + 1)) (offF fl (wL L).val (2 * t1.val) (2 * k.val + 1)) 3 49 := by
        unfold pair0_region.sl.v1604_1; rw [aB3_48]
        exact acc_step d L fl tab (wL L).val (2 * t1.val) (2 * k.val + 1) 1 _ hRB ⟨48, by decide⟩ ⟨3, by decide⟩ 48#32 rfl _ hwB_48 _ (k1_off53_form _ _) _ _
      have aB3_50 : pair0_region.sl.v1638_1 d L tab t1 k r g1 g2 hR hin h5 = AccMath.accVec (rowF fl tab (wL L).val (2 * t1.val) (2 * k.val + 1)) (offF fl (wL L).val (2 * t1.val) (2 * k.val + 1)) 3 50 := by
        unfold pair0_region.sl.v1638_1; rw [aB3_49]
        exact acc_step d L fl tab (wL L).val (2 * t1.val) (2 * k.val + 1) 1 _ hRB ⟨49, by decide⟩ ⟨3, by decide⟩ 48#32 rfl _ hwB_49 _ (k1_off54_form _ _) _ _
      have hPB3 : ∀ x : S1x1x16.Idx, pair0_region.sl.v1658_1 d L tab t1 k r g1 g2 hR hin h5 x = Spec.bagPartial fl tab (128 * (wL L).val + 16 * (2 * t1.val) + (2 * k.val + 1)) (16 * 3 + (x 2).val) 50 := fun x => by
        unfold pair0_region.sl.v1658_1; rw [aB3_50]; exact payload_ok fl tab (wL L).val (2 * t1.val) (2 * k.val + 1) ⟨3, by decide⟩ _ x
      refine ⟨hT0, hV0, hT1, hV1, ?_, ?_⟩
      · exact RowsV_landing0 d L fl tab _ (wL L).val (2 * t1.val) (2 * (k.val + 1)) g1 k1_off34 _ (fun j hb => ((words_of_TixV d L fl (wL L).val ((2 * t1.val) + 1) 1 0 (by decide) (by decide) g1 hT1 k1_off34 (by rw [k1_off34_eq]; rfl)) j hb).trans (by rw [show 2 * (k.val + 1) = 16 from by omega, blkWord_next])) _ _
      · have K0 := (WbV_iff_WbK d L fl tab (wL L).val (2 * t1.val) 0 (2 * k.val) wb).mp hWb
        have KA := WbK_bag d L fl tab (wL L).val (2 * t1.val) 0 _ wb K0 ⟨2 * k.val, by omega⟩ (k1_off28 k) (k1_off29 k) (k1_off30 k) (k1_off31 k)
          (k1_off28_eq k) (k1_off29_eq k) (k1_off30_eq k) (k1_off31_eq k) (k1_off28_inb k) (k1_off29_inb k) (k1_off30_inb k) (k1_off31_inb k) _ _ _ _ hPA0 hPA1 hPA2 hPA3
        have KB := WbK_bag d L fl tab (wL L).val (2 * t1.val) 0 _ _ KA ⟨2 * k.val + 1, by omega⟩ (k1_off55 k) (k1_off56 k) (k1_off57 k) (k1_off58 k)
          (k1_off55_eq k) (k1_off56_eq k) (k1_off57_eq k) (k1_off58_eq k) (k1_off55_inb k) (k1_off56_inb k) (k1_off57_inb k) (k1_off58_inb k) _ _ _ _ hPB0 hPB1 hPB2 hPB3
        intro g c hg
        refine KB g c ?_
        by_cases h1 : g.val < 2 * k.val
        · exact .inl (.inl h1)
        by_cases h2 : g.val = 2 * k.val
        · exact .inl (.inr (Fin.ext h2))
        · exact .inr (Fin.ext (by show g.val = 2 * k.val + 1; omega))

end Tile

end Cert.Proof.Bag

end
-- ==== Proof.TileChk1.lean ====
/-
  The printed checks of the SparseCore body, discharged by name: each check `k1_chkN` of an extracted column-offset word
  follows from the word being 0 or 64 (`TileChk.chkN`).
-/
import proofs.«203835_g19404662243951_cont_8to1_399_35_alg».proof.Proof.TileChk
import Idealize.ShloMosaic.Lib.Tactic

namespace Cert.Proof.Bag

open Lean Elab Tactic Meta in
/-- Reads the printed check at the head of the goal off its name and applies that check's lemma, leaving the word's fact. -/
elab "chk_disch1" : tactic => withMainContext do
  let g ← getMainGoal
  let t ← instantiateMVars (← g.getType)
  let .const n _ := t.getAppFn | throwError "chk_disch1: not a check"
  let .str _ last := n | throwError "chk_disch1: not a check"
  unless last.startsWith "k1_chk" do throwError "chk_disch1: not a check"
  let idx := last.drop 6
  let lem : Name := (`Cert.Proof.TileChk.chk1).getPrefix ++ Name.mkSimple ("chk" ++ idx)
  evalTactic (← `(tactic| first | (refine $(mkIdent lem) ?_) | (refine $(mkIdent lem) _ ?_)))

end Cert.Proof.Bag
-- ==== Proof.TilePair1a.lean ====
/-
  One trip of an odd block's pair loop on a vector subcore, a trip before the last (`k < 7`): from what holds before trip `k`
  to what holds before trip `k + 1`.

  The trip waits for the gather of bag `2 k` into slot 0, starts the gather of bag `2 k + 1` into slot 1 (its list in the second
  half of the row-number scratch), sums bag `2 k`'s fifty rows into row `2 k` of slot 1 of the write-back scratch, waits for the
  second gather, starts the gather of bag `2 k + 2` into slot 0, and sums bag `2 k + 1` into row `2 k + 1`. Each accumulator,
  fifty rows on, is the bag's partial sum of fifty terms at its sixteen columns: row by row, a sixteen-lane load of the
  gathered row at its column offset adds the row's term.
-/
import proofs.«203835_g19404662243951_cont_8to1_399_35_alg».proof.Proof.TilePre
import proofs.«203835_g19404662243951_cont_8to1_399_35_alg».proof.Proof.Pay
import proofs.«203835_g19404662243951_cont_8to1_399_35_alg».proof.Proof.TileChk
import proofs.«203835_g19404662243951_cont_8to1_399_35_alg».proof.Proof.TileMath
import proofs.«203835_g19404662243951_cont_8to1_399_35_alg».proof.Proof.TileInv
import proofs.«203835_g19404662243951_cont_8to1_399_35_alg».proof.Proof.TileInv1
import proofs.«203835_g19404662243951_cont_8to1_399_35_alg».proof.Proof.Gen.KernelIdeal.Skeleton
import proofs.«203835_g19404662243951_cont_8to1_399_35_alg».proof.Proof.TilePairVal
import proofs.«203835_g19404662243951_cont_8to1_399_35_alg».proof.Proof.TileChk1
import Idealize.ShloMosaic.Lib.Tactic

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid1.Coords)

set_option maxHeartbeats 4000000 in
theorem pair1_lt (fl : IVec Spec.SFlat 32) (qt : PosShare TreeShare) (tab : FVec F Spec.STab .f32) (O : CellTallies nD τ sig (HIx 1))
    (W0 : Waits sig (HIx 1)) (t1 : Fin k1_t1_loop.trips) (v1407 : BitVec 32) (k : Fin k1_t5_loop.trips) (hk : k.val < 7) :
    invF d L fl qt tab O W0 (2 * t1.val + 1) k.val ⟨⟩
      ⊢ wp frame (wpE (defs₀ (F := F)) 𝒱₀ (thr d L) none) Set.univ
          (k1_t5_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10 t1 v1407 k ⟨⟩)
          (invF d L fl qt tab O W0 (2 * t1.val + 1) (k.val + 1)) := by
  unfold k1_t5_body
  unfold invF
  iintro ⟨#Hmw', %r, %g1, %g2, %wb, %o, %ho, ⟨%hT, %hR, %ho_eq, %hV⟩, Hg0, H1, Ht, H3, H2, H4, Hg1, %W', %hW', HO⟩
  have hin := hin_of d L g1 hT
  have h9 := cond9_lt k hk
  have h10 := cond10_lt t1 k hk
  sl_exec_parts (disch := first | decide | (chk_disch1; exact hR _))
  sl_unroll
  sl_exec_parts (disch := first | decide | (chk_disch1; exact hR _))
  sl_unroll
  sl_exec_parts (disch := first | decide | (chk_disch1; exact hR _))
  sl_step
  have harith : 128 * k.val + 1152 = 1024 + 128 * (k.val + 1) := by omega
  have hoff : k1_off90 k = lo1 (k.val + 1) := by rw [k1_off90_eq]; unfold lo1; rw [if_pos (by omega), harith]
  isplitl []; · iexact Hmw'
  iexists _; iexists g1; iexists g2; iexists _; iexists (k1_off90 k); iexists (k1_off90_inb k h9)
  isplitr; rotate_left
  · isplitl [Hg0]; · iexact Hg0
    isplitl [H1]; · iexact H1
    isplitl [Ht]; · iexact Ht
    isplitl [H3]; · iexact H3
    isplitl [H2]; · iexact H2
    isplitl [H4]; · iexact H4
    isplitl [Hg1]; · iexact Hg1
    iexists (insert (SemLoc.dma cc1_scratch6.sem, (default : HIx 1)) (insert (SemLoc.dma cc1_scratch5.sem, (default : HIx 1)) W')); isplitr
    · ipureintro; intro p hp
      rcases Finset.mem_insert.mp hp with rfl | hp
      · exact .inr rfl
      rcases Finset.mem_insert.mp hp with rfl | hp
      · exact .inr rfl
      · exact hW' p hp
    · iexact HO
  · ipureintro
    refine ⟨hT, hR, hoff, ?_⟩
    obtain ⟨hT1, hR1, hnext, hrows, hwb⟩ := hV
    refine ⟨hT1, hR1, hnext, fun _ => ?_, ?_⟩
    · have hw := words_of_TixV d L fl (wL L).val (2 * t1.val + 1) 1 (2 * k.val + 2) (by omega) (by omega) g1 hT1 (k1_off90 k)
        (by rw [k1_off90_eq]; show 128 * k.val + 1152 = 1024 * 1 + 64 * (2 * k.val + 2); omega)
      have e : 2 * (k.val + 1) = 2 * k.val + 2 := by omega
      rw [e]
      exact RowsV_landing0 d L fl tab (by decide) (wL L).val (2 * t1.val + 1) (2 * k.val + 2) g1 (k1_off90 k) (k1_off90_inb k h9) hw
        (hin _ _) _
    · skip
      have h8 : k.val < 8 := lt_of_lt_of_eq k.isLt trips5
      have hRA : RowsV d L fl tab (wL L).val (2 * t1.val + 1) (2 * k.val) 0 (View.write (Elt F) (h1M).view r (pair1_lt.sl.gather0 d L tab k g1 hin) Finset.univ) :=
        RowsV_keep0 d L fl tab (wL L).val (2 * t1.val + 1) (2 * k.val) r _ (hrows (Or.inl h8))
      have hwB := words_of_TixV d L fl (wL L).val (2 * t1.val + 1) 1 (2 * k.val + 1) (by decide) (by omega) g1 hT1 (k1_off64 k)
        (by rw [k1_off64_eq]; show 128 * k.val + 1088 = 1024 * 1 + 64 * (2 * k.val + 1); omega)
      have hRB1 : RowsV d L fl tab (wL L).val (2 * t1.val + 1) (2 * k.val + 1) 1 (View.write (Elt F) (h1M).view r (pair1_lt.sl.gather0 d L tab k g1 hin) Finset.univ) :=
        RowsV_landing1 d L fl tab (by decide) (wL L).val (2 * t1.val + 1) (2 * k.val + 1) g1 (k1_off64 k) (k1_off64_inb k) hwB (hin _ _) r
      have hRB : RowsV d L fl tab (wL L).val (2 * t1.val + 1) (2 * k.val + 1) 1 (View.write (Elt F) (h0M).view (View.write (Elt F) (h1M).view r (pair1_lt.sl.gather0 d L tab k g1 hin) Finset.univ) (pair1_lt.sl.gather212 d L tab k g1 hin h9) Finset.univ) :=
        RowsV_keep1 d L fl tab (wL L).val (2 * t1.val + 1) (2 * k.val + 1) _ _ hRB1
      have hw_v1667 : pair1_lt.sl.v1667 d L k g2 = Spec.tcol (blkWord fl (wL L).val (2 * t1.val + 1) (64 * (2 * k.val) + 0)) := by
        refine (rv_extract d L g2 (k1_off65 k ⟨0, by decide⟩) _ _ 0 (by decide) _ _).trans ?_
        exact rv_word d L fl (wL L).val (2 * t1.val + 1) 1 (2 * k.val) 0 (by decide) (by omega) (by decide) g2 hR1 _
          (by rw [k1_off65_eq]; show 128 * k.val + 16 * 0 + 1024 + 0 = 1024 * 1 + 64 * (2 * k.val) + 0; omega) _
      have hw_v1703 : pair1_lt.sl.v1703 d L k g2 = Spec.tcol (blkWord fl (wL L).val (2 * t1.val + 1) (64 * (2 * k.val) + 1)) := by
        refine (rv_extract d L g2 (k1_off65 k ⟨0, by decide⟩) _ _ 1 (by decide) _ _).trans ?_
        exact rv_word d L fl (wL L).val (2 * t1.val + 1) 1 (2 * k.val) 1 (by decide) (by omega) (by decide) g2 hR1 _
          (by rw [k1_off65_eq]; show 128 * k.val + 16 * 0 + 1024 + 1 = 1024 * 1 + 64 * (2 * k.val) + 1; omega) _
      have hw_v1739 : pair1_lt.sl.v1739 d L k g2 = Spec.tcol (blkWord fl (wL L).val (2 * t1.val + 1) (64 * (2 * k.val) + 2)) := by
        refine (rv_extract d L g2 (k1_off65 k ⟨0, by decide⟩) _ _ 2 (by decide) _ _).trans ?_
        exact rv_word d L fl (wL L).val (2 * t1.val + 1) 1 (2 * k.val) 2 (by decide) (by omega) (by decide) g2 hR1 _
          (by rw [k1_off65_eq]; show 128 * k.val + 16 * 0 + 1024 + 2 = 1024 * 1 + 64 * (2 * k.val) + 2; omega) _
      have hw_v1775 : pair1_lt.sl.v1775 d L k g2 = Spec.tcol (blkWord fl (wL L).val (2 * t1.val + 1) (64 * (2 * k.val) + 3)) := by
        refine (rv_extract d L g2 (k1_off65 k ⟨0, by decide⟩) _ _ 3 (by decide) _ _).trans ?_
        exact rv_word d L fl (wL L).val (2 * t1.val + 1) 1 (2 * k.val) 3 (by decide) (by omega) (by decide) g2 hR1 _
          (by rw [k1_off65_eq]; show 128 * k.val + 16 * 0 + 1024 + 3 = 1024 * 1 + 64 * (2 * k.val) + 3; omega) _
      have hw_v1811 : pair1_lt.sl.v1811 d L k g2 = Spec.tcol (blkWord fl (wL L).val (2 * t1.val + 1) (64 * (2 * k.val) + 4)) := by
        refine (rv_extract d L g2 (k1_off65 k ⟨0, by decide⟩) _ _ 4 (by decide) _ _).trans ?_
        exact rv_word d L fl (wL L).val (2 * t1.val + 1) 1 (2 * k.val) 4 (by decide) (by omega) (by decide) g2 hR1 _
          (by rw [k1_off65_eq]; show 128 * k.val + 16 * 0 + 1024 + 4 = 1024 * 1 + 64 * (2 * k.val) + 4; omega) _
      have hw_v1847 : pair1_lt.sl.v1847 d L k g2 = Spec.tcol (blkWord fl (wL L).val (2 * t1.val + 1) (64 * (2 * k.val) + 5)) := by
        refine (rv_extract d L g2 (k1_off65 k ⟨0, by decide⟩) _ _ 5 (by decide) _ _).trans ?_
        exact rv_word d L fl (wL L).val (2 * t1.val + 1) 1 (2 * k.val) 5 (by decide) (by omega) (by decide) g2 hR1 _
          (by rw [k1_off65_eq]; show 128 * k.val + 16 * 0 + 1024 + 5 = 1024 * 1 + 64 * (2 * k.val) + 5; omega) _
      have hw_v1883 : pair1_lt.sl.v1883 d L k g2 = Spec.tcol (blkWord fl (wL L).val (2 * t1.val + 1) (64 * (2 * k.val) + 6)) := by
        refine (rv_extract d L g2 (k1_off65 k ⟨0, by decide⟩) _ _ 6 (by decide) _ _).trans ?_
        exact rv_word d L fl (wL L).val (2 * t1.val + 1) 1 (2 * k.val) 6 (by decide) (by omega) (by decide) g2 hR1 _
          (by rw [k1_off65_eq]; show 128 * k.val + 16 * 0 + 1024 + 6 = 1024 * 1 + 64 * (2 * k.val) + 6; omega) _
      have hw_v1919 : pair1_lt.sl.v1919 d L k g2 = Spec.tcol (blkWord fl (wL L).val (2 * t1.val + 1) (64 * (2 * k.val) + 7)) := by
        refine (rv_extract d L g2 (k1_off65 k ⟨0, by decide⟩) _ _ 7 (by decide) _ _).trans ?_
        exact rv_word d L fl (wL L).val (2 * t1.val + 1) 1 (2 * k.val) 7 (by decide) (by omega) (by decide) g2 hR1 _
          (by rw [k1_off65_eq]; show 128 * k.val + 16 * 0 + 1024 + 7 = 1024 * 1 + 64 * (2 * k.val) + 7; omega) _
      have hw_v1955 : pair1_lt.sl.v1955 d L k g2 = Spec.tcol (blkWord fl (wL L).val (2 * t1.val + 1) (64 * (2 * k.val) + 8)) := by
        refine (rv_extract d L g2 (k1_off65 k ⟨0, by decide⟩) _ _ 8 (by decide) _ _).trans ?_
        exact rv_word d L fl (wL L).val (2 * t1.val + 1) 1 (2 * k.val) 8 (by decide) (by omega) (by decide) g2 hR1 _
          (by rw [k1_off65_eq]; show 128 * k.val + 16 * 0 + 1024 + 8 = 1024 * 1 + 64 * (2 * k.val) + 8; omega) _
      have hw_v1991 : pair1_lt.sl.v1991 d L k g2 = Spec.tcol (blkWord fl (wL L).val (2 * t1.val + 1) (64 * (2 * k.val) + 9)) := by
        refine (rv_extract d L g2 (k1_off65 k ⟨0, by decide⟩) _ _ 9 (by decide) _ _).trans ?_
        exact rv_word d L fl (wL L).val (2 * t1.val + 1) 1 (2 * k.val) 9 (by decide) (by omega) (by decide) g2 hR1 _
          (by rw [k1_off65_eq]; show 128 * k.val + 16 * 0 + 1024 + 9 = 1024 * 1 + 64 * (2 * k.val) + 9; omega) _
      have hw_v2027 : pair1_lt.sl.v2027 d L k g2 = Spec.tcol (blkWord fl (wL L).val (2 * t1.val + 1) (64 * (2 * k.val) + 10)) := by
        refine (rv_extract d L g2 (k1_off65 k ⟨0, by decide⟩) _ _ 10 (by decide) _ _).trans ?_
        exact rv_word d L fl (wL L).val (2 * t1.val + 1) 1 (2 * k.val) 10 (by decide) (by omega) (by decide) g2 hR1 _
          (by rw [k1_off65_eq]; show 128 * k.val + 16 * 0 + 1024 + 10 = 1024 * 1 + 64 * (2 * k.val) + 10; omega) _
      have hw_v2063 : pair1_lt.sl.v2063 d L k g2 = Spec.tcol (blkWord fl (wL L).val (2 * t1.val + 1) (64 * (2 * k.val) + 11)) := by
        refine (rv_extract d L g2 (k1_off65 k ⟨0, by decide⟩) _ _ 11 (by decide) _ _).trans ?_
        exact rv_word d L fl (wL L).val (2 * t1.val + 1) 1 (2 * k.val) 11 (by decide) (by omega) (by decide) g2 hR1 _
          (by rw [k1_off65_eq]; show 128 * k.val + 16 * 0 + 1024 + 11 = 1024 * 1 + 64 * (2 * k.val) + 11; omega) _
      have hw_v2099 : pair1_lt.sl.v2099 d L k g2 = Spec.tcol (blkWord fl (wL L).val (2 * t1.val + 1) (64 * (2 * k.val) + 12)) := by
        refine (rv_extract d L g2 (k1_off65 k ⟨0, by decide⟩) _ _ 12 (by decide) _ _).trans ?_
        exact rv_word d L fl (wL L).val (2 * t1.val + 1) 1 (2 * k.val) 12 (by decide) (by omega) (by decide) g2 hR1 _
          (by rw [k1_off65_eq]; show 128 * k.val + 16 * 0 + 1024 + 12 = 1024 * 1 + 64 * (2 * k.val) + 12; omega) _
      have hw_v2135 : pair1_lt.sl.v2135 d L k g2 = Spec.tcol (blkWord fl (wL L).val (2 * t1.val + 1) (64 * (2 * k.val) + 13)) := by
        refine (rv_extract d L g2 (k1_off65 k ⟨0, by decide⟩) _ _ 13 (by decide) _ _).trans ?_
        exact rv_word d L fl (wL L).val (2 * t1.val + 1) 1 (2 * k.val) 13 (by decide) (by omega) (by decide) g2 hR1 _
          (by rw [k1_off65_eq]; show 128 * k.val + 16 * 0 + 1024 + 13 = 1024 * 1 + 64 * (2 * k.val) + 13; omega) _
      have hw_v2171 : pair1_lt.sl.v2171 d L k g2 = Spec.tcol (blkWord fl (wL L).val (2 * t1.val + 1) (64 * (2 * k.val) + 14)) := by
        refine (rv_extract d L g2 (k1_off65 k ⟨0, by decide⟩) _ _ 14 (by decide) _ _).trans ?_
        exact rv_word d L fl (wL L).val (2 * t1.val + 1) 1 (2 * k.val) 14 (by decide) (by omega) (by decide) g2 hR1 _
          (by rw [k1_off65_eq]; show 128 * k.val + 16 * 0 + 1024 + 14 = 1024 * 1 + 64 * (2 * k.val) + 14; omega) _
      have hw_v2207 : pair1_lt.sl.v2207 d L k g2 = Spec.tcol (blkWord fl (wL L).val (2 * t1.val + 1) (64 * (2 * k.val) + 15)) := by
        refine (rv_extract d L g2 (k1_off65 k ⟨0, by decide⟩) _ _ 15 (by decide) _ _).trans ?_
        exact rv_word d L fl (wL L).val (2 * t1.val + 1) 1 (2 * k.val) 15 (by decide) (by omega) (by decide) g2 hR1 _
          (by rw [k1_off65_eq]; show 128 * k.val + 16 * 0 + 1024 + 15 = 1024 * 1 + 64 * (2 * k.val) + 15; omega) _
      have hw_v1667_1 : pair1_lt.sl.v1667_1 d L k g2 = Spec.tcol (blkWord fl (wL L).val (2 * t1.val + 1) (64 * (2 * k.val) + 16)) := by
        refine (rv_extract d L g2 (k1_off65 k ⟨1, by decide⟩) _ _ 0 (by decide) _ _).trans ?_
        exact rv_word d L fl (wL L).val (2 * t1.val + 1) 1 (2 * k.val) 16 (by decide) (by omega) (by decide) g2 hR1 _
          (by rw [k1_off65_eq]; show 128 * k.val + 16 * 1 + 1024 + 0 = 1024 * 1 + 64 * (2 * k.val) + 16; omega) _
      have hw_v1703_1 : pair1_lt.sl.v1703_1 d L k g2 = Spec.tcol (blkWord fl (wL L).val (2 * t1.val + 1) (64 * (2 * k.val) + 17)) := by
        refine (rv_extract d L g2 (k1_off65 k ⟨1, by decide⟩) _ _ 1 (by decide) _ _).trans ?_
        exact rv_word d L fl (wL L).val (2 * t1.val + 1) 1 (2 * k.val) 17 (by decide) (by omega) (by decide) g2 hR1 _
          (by rw [k1_off65_eq]; show 128 * k.val + 16 * 1 + 1024 + 1 = 1024 * 1 + 64 * (2 * k.val) + 17; omega) _
      have hw_v1739_1 : pair1_lt.sl.v1739_1 d L k g2 = Spec.tcol (blkWord fl (wL L).val (2 * t1.val + 1) (64 * (2 * k.val) + 18)) := by
        refine (rv_extract d L g2 (k1_off65 k ⟨1, by decide⟩) _ _ 2 (by decide) _ _).trans ?_
        exact rv_word d L fl (wL L).val (2 * t1.val + 1) 1 (2 * k.val) 18 (by decide) (by omega) (by decide) g2 hR1 _
          (by rw [k1_off65_eq]; show 128 * k.val + 16 * 1 + 1024 + 2 = 1024 * 1 + 64 * (2 * k.val) + 18; omega) _
      have hw_v1775_1 : pair1_lt.sl.v1775_1 d L k g2 = Spec.tcol (blkWord fl (wL L).val (2 * t1.val + 1) (64 * (2 * k.val) + 19)) := by
        refine (rv_extract d L g2 (k1_off65 k ⟨1, by decide⟩) _ _ 3 (by decide) _ _).trans ?_
        exact rv_word d L fl (wL L).val (2 * t1.val + 1) 1 (2 * k.val) 19 (by decide) (by omega) (by decide) g2 hR1 _
          (by rw [k1_off65_eq]; show 128 * k.val + 16 * 1 + 1024 + 3 = 1024 * 1 + 64 * (2 * k.val) + 19; omega) _
      have hw_v1811_1 : pair1_lt.sl.v1811_1 d L k g2 = Spec.tcol (blkWord fl (wL L).val (2 * t1.val + 1) (64 * (2 * k.val) + 20)) := by
        refine (rv_extract d L g2 (k1_off65 k ⟨1, by decide⟩) _ _ 4 (by decide) _ _).trans ?_
        exact rv_word d L fl (wL L).val (2 * t1.val + 1) 1 (2 * k.val) 20 (by decide) (by omega) (by decide) g2 hR1 _
          (by rw [k1_off65_eq]; show 128 * k.val + 16 * 1 + 1024 + 4 = 1024 * 1 + 64 * (2 * k.val) + 20; omega) _
      have hw_v1847_1 : pair1_lt.sl.v1847_1 d L k g2 = Spec.tcol (blkWord fl (wL L).val (2 * t1.val + 1) (64 * (2 * k.val) + 21)) := by
        refine (rv_extract d L g2 (k1_off65 k ⟨1, by decide⟩) _ _ 5 (by decide) _ _).trans ?_
        exact rv_word d L fl (wL L).val (2 * t1.val + 1) 1 (2 * k.val) 21 (by decide) (by omega) (by decide) g2 hR1 _
          (by rw [k1_off65_eq]; show 128 * k.val + 16 * 1 + 1024 + 5 = 1024 * 1 + 64 * (2 * k.val) + 21; omega) _
      have hw_v1883_1 : pair1_lt.sl.v1883_1 d L k g2 = Spec.tcol (blkWord fl (wL L).val (2 * t1.val + 1) (64 * (2 * k.val) + 22)) := by
        refine (rv_extract d L g2 (k1_off65 k ⟨1, by decide⟩) _ _ 6 (by decide) _ _).trans ?_
        exact rv_word d L fl (wL L).val (2 * t1.val + 1) 1 (2 * k.val) 22 (by decide) (by omega) (by decide) g2 hR1 _
          (by rw [k1_off65_eq]; show 128 * k.val + 16 * 1 + 1024 + 6 = 1024 * 1 + 64 * (2 * k.val) + 22; omega) _
      have hw_v1919_1 : pair1_lt.sl.v1919_1 d L k g2 = Spec.tcol (blkWord fl (wL L).val (2 * t1.val + 1) (64 * (2 * k.val) + 23)) := by
        refine (rv_extract d L g2 (k1_off65 k ⟨1, by decide⟩) _ _ 7 (by decide) _ _).trans ?_
        exact rv_word d L fl (wL L).val (2 * t1.val + 1) 1 (2 * k.val) 23 (by decide) (by omega) (by decide) g2 hR1 _
          (by rw [k1_off65_eq]; show 128 * k.val + 16 * 1 + 1024 + 7 = 1024 * 1 + 64 * (2 * k.val) + 23; omega) _
      have hw_v1955_1 : pair1_lt.sl.v1955_1 d L k g2 = Spec.tcol (blkWord fl (wL L).val (2 * t1.val + 1) (64 * (2 * k.val) + 24)) := by
        refine (rv_extract d L g2 (k1_off65 k ⟨1, by decide⟩) _ _ 8 (by decide) _ _).trans ?_
        exact rv_word d L fl (wL L).val (2 * t1.val + 1) 1 (2 * k.val) 24 (by decide) (by omega) (by decide) g2 hR1 _
          (by rw [k1_off65_eq]; show 128 * k.val + 16 * 1 + 1024 + 8 = 1024 * 1 + 64 * (2 * k.val) + 24; omega) _
      have hw_v1991_1 : pair1_lt.sl.v1991_1 d L k g2 = Spec.tcol (blkWord fl (wL L).val (2 * t1.val + 1) (64 * (2 * k.val) + 25)) := by
        refine (rv_extract d L g2 (k1_off65 k ⟨1, by decide⟩) _ _ 9 (by decide) _ _).trans ?_
        exact rv_word d L fl (wL L).val (2 * t1.val + 1) 1 (2 * k.val) 25 (by decide) (by omega) (by decide) g2 hR1 _
          (by rw [k1_off65_eq]; show 128 * k.val + 16 * 1 + 1024 + 9 = 1024 * 1 + 64 * (2 * k.val) + 25; omega) _
      have hw_v2027_1 : pair1_lt.sl.v2027_1 d L k g2 = Spec.tcol (blkWord fl (wL L).val (2 * t1.val + 1) (64 * (2 * k.val) + 26)) := by
        refine (rv_extract d L g2 (k1_off65 k ⟨1, by decide⟩) _ _ 10 (by decide) _ _).trans ?_
        exact rv_word d L fl (wL L).val (2 * t1.val + 1) 1 (2 * k.val) 26 (by decide) (by omega) (by decide) g2 hR1 _
          (by rw [k1_off65_eq]; show 128 * k.val + 16 * 1 + 1024 + 10 = 1024 * 1 + 64 * (2 * k.val) + 26; omega) _
      have hw_v2063_1 : pair1_lt.sl.v2063_1 d L k g2 = Spec.tcol (blkWord fl (wL L).val (2 * t1.val + 1) (64 * (2 * k.val) + 27)) := by
        refine (rv_extract d L g2 (k1_off65 k ⟨1, by decide⟩) _ _ 11 (by decide) _ _).trans ?_
        exact rv_word d L fl (wL L).val (2 * t1.val + 1) 1 (2 * k.val) 27 (by decide) (by omega) (by decide) g2 hR1 _
          (by rw [k1_off65_eq]; show 128 * k.val + 16 * 1 + 1024 + 11 = 1024 * 1 + 64 * (2 * k.val) + 27; omega) _
      have hw_v2099_1 : pair1_lt.sl.v2099_1 d L k g2 = Spec.tcol (blkWord fl (wL L).val (2 * t1.val + 1) (64 * (2 * k.val) + 28)) := by
        refine (rv_extract d L g2 (k1_off65 k ⟨1, by decide⟩) _ _ 12 (by decide) _ _).trans ?_
        exact rv_word d L fl (wL L).val (2 * t1.val + 1) 1 (2 * k.val) 28 (by decide) (by omega) (by decide) g2 hR1 _
          (by rw [k1_off65_eq]; show 128 * k.val + 16 * 1 + 1024 + 12 = 1024 * 1 + 64 * (2 * k.val) + 28; omega) _
      have hw_v2135_1 : pair1_lt.sl.v2135_1 d L k g2 = Spec.tcol (blkWord fl (wL L).val (2 * t1.val + 1) (64 * (2 * k.val) + 29)) := by
        refine (rv_extract d L g2 (k1_off65 k ⟨1, by decide⟩) _ _ 13 (by decide) _ _).trans ?_
        exact rv_word d L fl (wL L).val (2 * t1.val + 1) 1 (2 * k.val) 29 (by decide) (by omega) (by decide) g2 hR1 _
          (by rw [k1_off65_eq]; show 128 * k.val + 16 * 1 + 1024 + 13 = 1024 * 1 + 64 * (2 * k.val) + 29; omega) _
      have hw_v2171_1 : pair1_lt.sl.v2171_1 d L k g2 = Spec.tcol (blkWord fl (wL L).val (2 * t1.val + 1) (64 * (2 * k.val) + 30)) := by
        refine (rv_extract d L g2 (k1_off65 k ⟨1, by decide⟩) _ _ 14 (by decide) _ _).trans ?_
        exact rv_word d L fl (wL L).val (2 * t1.val + 1) 1 (2 * k.val) 30 (by decide) (by omega) (by decide) g2 hR1 _
          (by rw [k1_off65_eq]; show 128 * k.val + 16 * 1 + 1024 + 14 = 1024 * 1 + 64 * (2 * k.val) + 30; omega) _
      have hw_v2207_1 : pair1_lt.sl.v2207_1 d L k g2 = Spec.tcol (blkWord fl (wL L).val (2 * t1.val + 1) (64 * (2 * k.val) + 31)) := by
        refine (rv_extract d L g2 (k1_off65 k ⟨1, by decide⟩) _ _ 15 (by decide) _ _).trans ?_
        exact rv_word d L fl (wL L).val (2 * t1.val + 1) 1 (2 * k.val) 31 (by decide) (by omega) (by decide) g2 hR1 _
          (by rw [k1_off65_eq]; show 128 * k.val + 16 * 1 + 1024 + 15 = 1024 * 1 + 64 * (2 * k.val) + 31; omega) _
      have hw_v1667_2 : pair1_lt.sl.v1667_2 d L k g2 = Spec.tcol (blkWord fl (wL L).val (2 * t1.val + 1) (64 * (2 * k.val) + 32)) := by
        refine (rv_extract d L g2 (k1_off65 k ⟨2, by decide⟩) _ _ 0 (by decide) _ _).trans ?_
        exact rv_word d L fl (wL L).val (2 * t1.val + 1) 1 (2 * k.val) 32 (by decide) (by omega) (by decide) g2 hR1 _
          (by rw [k1_off65_eq]; show 128 * k.val + 16 * 2 + 1024 + 0 = 1024 * 1 + 64 * (2 * k.val) + 32; omega) _
      have hw_v1703_2 : pair1_lt.sl.v1703_2 d L k g2 = Spec.tcol (blkWord fl (wL L).val (2 * t1.val + 1) (64 * (2 * k.val) + 33)) := by
        refine (rv_extract d L g2 (k1_off65 k ⟨2, by decide⟩) _ _ 1 (by decide) _ _).trans ?_
        exact rv_word d L fl (wL L).val (2 * t1.val + 1) 1 (2 * k.val) 33 (by decide) (by omega) (by decide) g2 hR1 _
          (by rw [k1_off65_eq]; show 128 * k.val + 16 * 2 + 1024 + 1 = 1024 * 1 + 64 * (2 * k.val) + 33; omega) _
      have hw_v1739_2 : pair1_lt.sl.v1739_2 d L k g2 = Spec.tcol (blkWord fl (wL L).val (2 * t1.val + 1) (64 * (2 * k.val) + 34)) := by
        refine (rv_extract d L g2 (k1_off65 k ⟨2, by decide⟩) _ _ 2 (by decide) _ _).trans ?_
        exact rv_word d L fl (wL L).val (2 * t1.val + 1) 1 (2 * k.val) 34 (by decide) (by omega) (by decide) g2 hR1 _
          (by rw [k1_off65_eq]; show 128 * k.val + 16 * 2 + 1024 + 2 = 1024 * 1 + 64 * (2 * k.val) + 34; omega) _
      have hw_v1775_2 : pair1_lt.sl.v1775_2 d L k g2 = Spec.tcol (blkWord fl (wL L).val (2 * t1.val + 1) (64 * (2 * k.val) + 35)) := by
        refine (rv_extract d L g2 (k1_off65 k ⟨2, by decide⟩) _ _ 3 (by decide) _ _).trans ?_
        exact rv_word d L fl (wL L).val (2 * t1.val + 1) 1 (2 * k.val) 35 (by decide) (by omega) (by decide) g2 hR1 _
          (by rw [k1_off65_eq]; show 128 * k.val + 16 * 2 + 1024 + 3 = 1024 * 1 + 64 * (2 * k.val) + 35; omega) _
      have hw_v1811_2 : pair1_lt.sl.v1811_2 d L k g2 = Spec.tcol (blkWord fl (wL L).val (2 * t1.val + 1) (64 * (2 * k.val) + 36)) := by
        refine (rv_extract d L g2 (k1_off65 k ⟨2, by decide⟩) _ _ 4 (by decide) _ _).trans ?_
        exact rv_word d L fl (wL L).val (2 * t1.val + 1) 1 (2 * k.val) 36 (by decide) (by omega) (by decide) g2 hR1 _
          (by rw [k1_off65_eq]; show 128 * k.val + 16 * 2 + 1024 + 4 = 1024 * 1 + 64 * (2 * k.val) + 36; omega) _
      have hw_v1847_2 : pair1_lt.sl.v1847_2 d L k g2 = Spec.tcol (blkWord fl (wL L).val (2 * t1.val + 1) (64 * (2 * k.val) + 37)) := by
        refine (rv_extract d L g2 (k1_off65 k ⟨2, by decide⟩) _ _ 5 (by decide) _ _).trans ?_
        exact rv_word d L fl (wL L).val (2 * t1.val + 1) 1 (2 * k.val) 37 (by decide) (by omega) (by decide) g2 hR1 _
          (by rw [k1_off65_eq]; show 128 * k.val + 16 * 2 + 1024 + 5 = 1024 * 1 + 64 * (2 * k.val) + 37; omega) _
      have hw_v1883_2 : pair1_lt.sl.v1883_2 d L k g2 = Spec.tcol (blkWord fl (wL L).val (2 * t1.val + 1) (64 * (2 * k.val) + 38)) := by
        refine (rv_extract d L g2 (k1_off65 k ⟨2, by decide⟩) _ _ 6 (by decide) _ _).trans ?_
        exact rv_word d L fl (wL L).val (2 * t1.val + 1) 1 (2 * k.val) 38 (by decide) (by omega) (by decide) g2 hR1 _
          (by rw [k1_off65_eq]; show 128 * k.val + 16 * 2 + 1024 + 6 = 1024 * 1 + 64 * (2 * k.val) + 38; omega) _
      have hw_v1919_2 : pair1_lt.sl.v1919_2 d L k g2 = Spec.tcol (blkWord fl (wL L).val (2 * t1.val + 1) (64 * (2 * k.val) + 39)) := by
        refine (rv_extract d L g2 (k1_off65 k ⟨2, by decide⟩) _ _ 7 (by decide) _ _).trans ?_
        exact rv_word d L fl (wL L).val (2 * t1.val + 1) 1 (2 * k.val) 39 (by decide) (by omega) (by decide) g2 hR1 _
          (by rw [k1_off65_eq]; show 128 * k.val + 16 * 2 + 1024 + 7 = 1024 * 1 + 64 * (2 * k.val) + 39; omega) _
      have hw_v1955_2 : pair1_lt.sl.v1955_2 d L k g2 = Spec.tcol (blkWord fl (wL L).val (2 * t1.val + 1) (64 * (2 * k.val) + 40)) := by
        refine (rv_extract d L g2 (k1_off65 k ⟨2, by decide⟩) _ _ 8 (by decide) _ _).trans ?_
        exact rv_word d L fl (wL L).val (2 * t1.val + 1) 1 (2 * k.val) 40 (by decide) (by omega) (by decide) g2 hR1 _
          (by rw [k1_off65_eq]; show 128 * k.val + 16 * 2 + 1024 + 8 = 1024 * 1 + 64 * (2 * k.val) + 40; omega) _
      have hw_v1991_2 : pair1_lt.sl.v1991_2 d L k g2 = Spec.tcol (blkWord fl (wL L).val (2 * t1.val + 1) (64 * (2 * k.val) + 41)) := by
        refine (rv_extract d L g2 (k1_off65 k ⟨2, by decide⟩) _ _ 9 (by decide) _ _).trans ?_
        exact rv_word d L fl (wL L).val (2 * t1.val + 1) 1 (2 * k.val) 41 (by decide) (by omega) (by decide) g2 hR1 _
          (by rw [k1_off65_eq]; show 128 * k.val + 16 * 2 + 1024 + 9 = 1024 * 1 + 64 * (2 * k.val) + 41; omega) _
      have hw_v2027_2 : pair1_lt.sl.v2027_2 d L k g2 = Spec.tcol (blkWord fl (wL L).val (2 * t1.val + 1) (64 * (2 * k.val) + 42)) := by
        refine (rv_extract d L g2 (k1_off65 k ⟨2, by decide⟩) _ _ 10 (by decide) _ _).trans ?_
        exact rv_word d L fl (wL L).val (2 * t1.val + 1) 1 (2 * k.val) 42 (by decide) (by omega) (by decide) g2 hR1 _
          (by rw [k1_off65_eq]; show 128 * k.val + 16 * 2 + 1024 + 10 = 1024 * 1 + 64 * (2 * k.val) + 42; omega) _
      have hw_v2063_2 : pair1_lt.sl.v2063_2 d L k g2 = Spec.tcol (blkWord fl (wL L).val (2 * t1.val + 1) (64 * (2 * k.val) + 43)) := by
        refine (rv_extract d L g2 (k1_off65 k ⟨2, by decide⟩) _ _ 11 (by decide) _ _).trans ?_
        exact rv_word d L fl (wL L).val (2 * t1.val + 1) 1 (2 * k.val) 43 (by decide) (by omega) (by decide) g2 hR1 _
          (by rw [k1_off65_eq]; show 128 * k.val + 16 * 2 + 1024 + 11 = 1024 * 1 + 64 * (2 * k.val) + 43; omega) _
      have hw_v2099_2 : pair1_lt.sl.v2099_2 d L k g2 = Spec.tcol (blkWord fl (wL L).val (2 * t1.val + 1) (64 * (2 * k.val) + 44)) := by
        refine (rv_extract d L g2 (k1_off65 k ⟨2, by decide⟩) _ _ 12 (by decide) _ _).trans ?_
        exact rv_word d L fl (wL L).val (2 * t1.val + 1) 1 (2 * k.val) 44 (by decide) (by omega) (by decide) g2 hR1 _
          (by rw [k1_off65_eq]; show 128 * k.val + 16 * 2 + 1024 + 12 = 1024 * 1 + 64 * (2 * k.val) + 44; omega) _
      have hw_v2135_2 : pair1_lt.sl.v2135_2 d L k g2 = Spec.tcol (blkWord fl (wL L).val (2 * t1.val + 1) (64 * (2 * k.val) + 45)) := by
        refine (rv_extract d L g2 (k1_off65 k ⟨2, by decide⟩) _ _ 13 (by decide) _ _).trans ?_
        exact rv_word d L fl (wL L).val (2 * t1.val + 1) 1 (2 * k.val) 45 (by decide) (by omega) (by decide) g2 hR1 _
          (by rw [k1_off65_eq]; show 128 * k.val + 16 * 2 + 1024 + 13 = 1024 * 1 + 64 * (2 * k.val) + 45; omega) _
      have hw_v2171_2 : pair1_lt.sl.v2171_2 d L k g2 = Spec.tcol (blkWord fl (wL L).val (2 * t1.val + 1) (64 * (2 * k.val) + 46)) := by
        refine (rv_extract d L g2 (k1_off65 k ⟨2, by decide⟩) _ _ 14 (by decide) _ _).trans ?_
        exact rv_word d L fl (wL L).val (2 * t1.val + 1) 1 (2 * k.val) 46 (by decide) (by omega) (by decide) g2 hR1 _
          (by rw [k1_off65_eq]; show 128 * k.val + 16 * 2 + 1024 + 14 = 1024 * 1 + 64 * (2 * k.val) + 46; omega) _
      have hw_v2207_2 : pair1_lt.sl.v2207_2 d L k g2 = Spec.tcol (blkWord fl (wL L).val (2 * t1.val + 1) (64 * (2 * k.val) + 47)) := by
        refine (rv_extract d L g2 (k1_off65 k ⟨2, by decide⟩) _ _ 15 (by decide) _ _).trans ?_
        exact rv_word d L fl (wL L).val (2 * t1.val + 1) 1 (2 * k.val) 47 (by decide) (by omega) (by decide) g2 hR1 _
          (by rw [k1_off65_eq]; show 128 * k.val + 16 * 2 + 1024 + 15 = 1024 * 1 + 64 * (2 * k.val) + 47; omega) _
      have hw_v1456 : pair1_lt.sl.v1456 d L k g2 = Spec.tcol (blkWord fl (wL L).val (2 * t1.val + 1) (64 * (2 * k.val) + 48)) := by
        refine (rv_extract d L g2 (k1_off82 k) _ _ 0 (by decide) _ _).trans ?_
        exact rv_word d L fl (wL L).val (2 * t1.val + 1) 1 (2 * k.val) 48 (by decide) (by omega) (by decide) g2 hR1 _
          (by rw [k1_off82_eq]; show 128 * k.val + 1072 + 0 = 1024 * 1 + 64 * (2 * k.val) + 48; omega) _
      have hw_v1490 : pair1_lt.sl.v1490 d L k g2 = Spec.tcol (blkWord fl (wL L).val (2 * t1.val + 1) (64 * (2 * k.val) + 49)) := by
        refine (rv_extract d L g2 (k1_off82 k) _ _ 1 (by decide) _ _).trans ?_
        exact rv_word d L fl (wL L).val (2 * t1.val + 1) 1 (2 * k.val) 49 (by decide) (by omega) (by decide) g2 hR1 _
          (by rw [k1_off82_eq]; show 128 * k.val + 1072 + 1 = 1024 * 1 + 64 * (2 * k.val) + 49; omega) _
      have hw_v1667_3 : pair1_lt.sl.v1667_3 d L k g2 = Spec.tcol (blkWord fl (wL L).val (2 * t1.val + 1) (64 * (2 * k.val + 1) + 0)) := by
        refine (rv_extract d L g2 (k1_off92 k ⟨0, by decide⟩) _ _ 0 (by decide) _ _).trans ?_
        exact rv_word d L fl (wL L).val (2 * t1.val + 1) 1 (2 * k.val + 1) 0 (by decide) (by omega) (by decide) g2 hR1 _
          (by rw [k1_off92_eq]; show 128 * k.val + 16 * 0 + 1088 + 0 = 1024 * 1 + 64 * (2 * k.val + 1) + 0; omega) _
      have hw_v1703_3 : pair1_lt.sl.v1703_3 d L k g2 = Spec.tcol (blkWord fl (wL L).val (2 * t1.val + 1) (64 * (2 * k.val + 1) + 1)) := by
        refine (rv_extract d L g2 (k1_off92 k ⟨0, by decide⟩) _ _ 1 (by decide) _ _).trans ?_
        exact rv_word d L fl (wL L).val (2 * t1.val + 1) 1 (2 * k.val + 1) 1 (by decide) (by omega) (by decide) g2 hR1 _
          (by rw [k1_off92_eq]; show 128 * k.val + 16 * 0 + 1088 + 1 = 1024 * 1 + 64 * (2 * k.val + 1) + 1; omega) _
      have hw_v1739_3 : pair1_lt.sl.v1739_3 d L k g2 = Spec.tcol (blkWord fl (wL L).val (2 * t1.val + 1) (64 * (2 * k.val + 1) + 2)) := by
        refine (rv_extract d L g2 (k1_off92 k ⟨0, by decide⟩) _ _ 2 (by decide) _ _).trans ?_
        exact rv_word d L fl (wL L).val (2 * t1.val + 1) 1 (2 * k.val + 1) 2 (by decide) (by omega) (by decide) g2 hR1 _
          (by rw [k1_off92_eq]; show 128 * k.val + 16 * 0 + 1088 + 2 = 1024 * 1 + 64 * (2 * k.val + 1) + 2; omega) _
      have hw_v1775_3 : pair1_lt.sl.v1775_3 d L k g2 = Spec.tcol (blkWord fl (wL L).val (2 * t1.val + 1) (64 * (2 * k.val + 1) + 3)) := by
        refine (rv_extract d L g2 (k1_off92 k ⟨0, by decide⟩) _ _ 3 (by decide) _ _).trans ?_
        exact rv_word d L fl (wL L).val (2 * t1.val + 1) 1 (2 * k.val + 1) 3 (by decide) (by omega) (by decide) g2 hR1 _
          (by rw [k1_off92_eq]; show 128 * k.val + 16 * 0 + 1088 + 3 = 1024 * 1 + 64 * (2 * k.val + 1) + 3; omega) _
      have hw_v1811_3 : pair1_lt.sl.v1811_3 d L k g2 = Spec.tcol (blkWord fl (wL L).val (2 * t1.val + 1) (64 * (2 * k.val + 1) + 4)) := by
        refine (rv_extract d L g2 (k1_off92 k ⟨0, by decide⟩) _ _ 4 (by decide) _ _).trans ?_
        exact rv_word d L fl (wL L).val (2 * t1.val + 1) 1 (2 * k.val + 1) 4 (by decide) (by omega) (by decide) g2 hR1 _
          (by rw [k1_off92_eq]; show 128 * k.val + 16 * 0 + 1088 + 4 = 1024 * 1 + 64 * (2 * k.val + 1) + 4; omega) _
      have hw_v1847_3 : pair1_lt.sl.v1847_3 d L k g2 = Spec.tcol (blkWord fl (wL L).val (2 * t1.val + 1) (64 * (2 * k.val + 1) + 5)) := by
        refine (rv_extract d L g2 (k1_off92 k ⟨0, by decide⟩) _ _ 5 (by decide) _ _).trans ?_
        exact rv_word d L fl (wL L).val (2 * t1.val + 1) 1 (2 * k.val + 1) 5 (by decide) (by omega) (by decide) g2 hR1 _
          (by rw [k1_off92_eq]; show 128 * k.val + 16 * 0 + 1088 + 5 = 1024 * 1 + 64 * (2 * k.val + 1) + 5; omega) _
      have hw_v1883_3 : pair1_lt.sl.v1883_3 d L k g2 = Spec.tcol (blkWord fl (wL L).val (2 * t1.val + 1) (64 * (2 * k.val + 1) + 6)) := by
        refine (rv_extract d L g2 (k1_off92 k ⟨0, by decide⟩) _ _ 6 (by decide) _ _).trans ?_
        exact rv_word d L fl (wL L).val (2 * t1.val + 1) 1 (2 * k.val + 1) 6 (by decide) (by omega) (by decide) g2 hR1 _
          (by rw [k1_off92_eq]; show 128 * k.val + 16 * 0 + 1088 + 6 = 1024 * 1 + 64 * (2 * k.val + 1) + 6; omega) _
      have hw_v1919_3 : pair1_lt.sl.v1919_3 d L k g2 = Spec.tcol (blkWord fl (wL L).val (2 * t1.val + 1) (64 * (2 * k.val + 1) + 7)) := by
        refine (rv_extract d L g2 (k1_off92 k ⟨0, by decide⟩) _ _ 7 (by decide) _ _).trans ?_
        exact rv_word d L fl (wL L).val (2 * t1.val + 1) 1 (2 * k.val + 1) 7 (by decide) (by omega) (by decide) g2 hR1 _
          (by rw [k1_off92_eq]; show 128 * k.val + 16 * 0 + 1088 + 7 = 1024 * 1 + 64 * (2 * k.val + 1) + 7; omega) _
      have hw_v1955_3 : pair1_lt.sl.v1955_3 d L k g2 = Spec.tcol (blkWord fl (wL L).val (2 * t1.val + 1) (64 * (2 * k.val + 1) + 8)) := by
        refine (rv_extract d L g2 (k1_off92 k ⟨0, by decide⟩) _ _ 8 (by decide) _ _).trans ?_
        exact rv_word d L fl (wL L).val (2 * t1.val + 1) 1 (2 * k.val + 1) 8 (by decide) (by omega) (by decide) g2 hR1 _
          (by rw [k1_off92_eq]; show 128 * k.val + 16 * 0 + 1088 + 8 = 1024 * 1 + 64 * (2 * k.val + 1) + 8; omega) _
      have hw_v1991_3 : pair1_lt.sl.v1991_3 d L k g2 = Spec.tcol (blkWord fl (wL L).val (2 * t1.val + 1) (64 * (2 * k.val + 1) + 9)) := by
        refine (rv_extract d L g2 (k1_off92 k ⟨0, by decide⟩) _ _ 9 (by decide) _ _).trans ?_
        exact rv_word d L fl (wL L).val (2 * t1.val + 1) 1 (2 * k.val + 1) 9 (by decide) (by omega) (by decide) g2 hR1 _
          (by rw [k1_off92_eq]; show 128 * k.val + 16 * 0 + 1088 + 9 = 1024 * 1 + 64 * (2 * k.val + 1) + 9; omega) _
      have hw_v2027_3 : pair1_lt.sl.v2027_3 d L k g2 = Spec.tcol (blkWord fl (wL L).val (2 * t1.val + 1) (64 * (2 * k.val + 1) + 10)) := by
        refine (rv_extract d L g2 (k1_off92 k ⟨0, by decide⟩) _ _ 10 (by decide) _ _).trans ?_
        exact rv_word d L fl (wL L).val (2 * t1.val + 1) 1 (2 * k.val + 1) 10 (by decide) (by omega) (by decide) g2 hR1 _
          (by rw [k1_off92_eq]; show 128 * k.val + 16 * 0 + 1088 + 10 = 1024 * 1 + 64 * (2 * k.val + 1) + 10; omega) _
      have hw_v2063_3 : pair1_lt.sl.v2063_3 d L k g2 = Spec.tcol (blkWord fl (wL L).val (2 * t1.val + 1) (64 * (2 * k.val + 1) + 11)) := by
        refine (rv_extract d L g2 (k1_off92 k ⟨0, by decide⟩) _ _ 11 (by decide) _ _).trans ?_
        exact rv_word d L fl (wL L).val (2 * t1.val + 1) 1 (2 * k.val + 1) 11 (by decide) (by omega) (by decide) g2 hR1 _
          (by rw [k1_off92_eq]; show 128 * k.val + 16 * 0 + 1088 + 11 = 1024 * 1 + 64 * (2 * k.val + 1) + 11; omega) _
      have hw_v2099_3 : pair1_lt.sl.v2099_3 d L k g2 = Spec.tcol (blkWord fl (wL L).val (2 * t1.val + 1) (64 * (2 * k.val + 1) + 12)) := by
        refine (rv_extract d L g2 (k1_off92 k ⟨0, by decide⟩) _ _ 12 (by decide) _ _).trans ?_
        exact rv_word d L fl (wL L).val (2 * t1.val + 1) 1 (2 * k.val + 1) 12 (by decide) (by omega) (by decide) g2 hR1 _
          (by rw [k1_off92_eq]; show 128 * k.val + 16 * 0 + 1088 + 12 = 1024 * 1 + 64 * (2 * k.val + 1) + 12; omega) _
      have hw_v2135_3 : pair1_lt.sl.v2135_3 d L k g2 = Spec.tcol (blkWord fl (wL L).val (2 * t1.val + 1) (64 * (2 * k.val + 1) + 13)) := by
        refine (rv_extract d L g2 (k1_off92 k ⟨0, by decide⟩) _ _ 13 (by decide) _ _).trans ?_
        exact rv_word d L fl (wL L).val (2 * t1.val + 1) 1 (2 * k.val + 1) 13 (by decide) (by omega) (by decide) g2 hR1 _
          (by rw [k1_off92_eq]; show 128 * k.val + 16 * 0 + 1088 + 13 = 1024 * 1 + 64 * (2 * k.val + 1) + 13; omega) _
      have hw_v2171_3 : pair1_lt.sl.v2171_3 d L k g2 = Spec.tcol (blkWord fl (wL L).val (2 * t1.val + 1) (64 * (2 * k.val + 1) + 14)) := by
        refine (rv_extract d L g2 (k1_off92 k ⟨0, by decide⟩) _ _ 14 (by decide) _ _).trans ?_
        exact rv_word d L fl (wL L).val (2 * t1.val + 1) 1 (2 * k.val + 1) 14 (by decide) (by omega) (by decide) g2 hR1 _
          (by rw [k1_off92_eq]; show 128 * k.val + 16 * 0 + 1088 + 14 = 1024 * 1 + 64 * (2 * k.val + 1) + 14; omega) _
      have hw_v2207_3 : pair1_lt.sl.v2207_3 d L k g2 = Spec.tcol (blkWord fl (wL L).val (2 * t1.val + 1) (64 * (2 * k.val + 1) + 15)) := by
        refine (rv_extract d L g2 (k1_off92 k ⟨0, by decide⟩) _ _ 15 (by decide) _ _).trans ?_
        exact rv_word d L fl (wL L).val (2 * t1.val + 1) 1 (2 * k.val + 1) 15 (by decide) (by omega) (by decide) g2 hR1 _
          (by rw [k1_off92_eq]; show 128 * k.val + 16 * 0 + 1088 + 15 = 1024 * 1 + 64 * (2 * k.val + 1) + 15; omega) _
      have hw_v1667_4 : pair1_lt.sl.v1667_4 d L k g2 = Spec.tcol (blkWord fl (wL L).val (2 * t1.val + 1) (64 * (2 * k.val + 1) + 16)) := by
        refine (rv_extract d L g2 (k1_off92 k ⟨1, by decide⟩) _ _ 0 (by decide) _ _).trans ?_
        exact rv_word d L fl (wL L).val (2 * t1.val + 1) 1 (2 * k.val + 1) 16 (by decide) (by omega) (by decide) g2 hR1 _
          (by rw [k1_off92_eq]; show 128 * k.val + 16 * 1 + 1088 + 0 = 1024 * 1 + 64 * (2 * k.val + 1) + 16; omega) _
      have hw_v1703_4 : pair1_lt.sl.v1703_4 d L k g2 = Spec.tcol (blkWord fl (wL L).val (2 * t1.val + 1) (64 * (2 * k.val + 1) + 17)) := by
        refine (rv_extract d L g2 (k1_off92 k ⟨1, by decide⟩) _ _ 1 (by decide) _ _).trans ?_
        exact rv_word d L fl (wL L).val (2 * t1.val + 1) 1 (2 * k.val + 1) 17 (by decide) (by omega) (by decide) g2 hR1 _
          (by rw [k1_off92_eq]; show 128 * k.val + 16 * 1 + 1088 + 1 = 1024 * 1 + 64 * (2 * k.val + 1) + 17; omega) _
      have hw_v1739_4 : pair1_lt.sl.v1739_4 d L k g2 = Spec.tcol (blkWord fl (wL L).val (2 * t1.val + 1) (64 * (2 * k.val + 1) + 18)) := by
        refine (rv_extract d L g2 (k1_off92 k ⟨1, by decide⟩) _ _ 2 (by decide) _ _).trans ?_
        exact rv_word d L fl (wL L).val (2 * t1.val + 1) 1 (2 * k.val + 1) 18 (by decide) (by omega) (by decide) g2 hR1 _
          (by rw [k1_off92_eq]; show 128 * k.val + 16 * 1 + 1088 + 2 = 1024 * 1 + 64 * (2 * k.val + 1) + 18; omega) _
      have hw_v1775_4 : pair1_lt.sl.v1775_4 d L k g2 = Spec.tcol (blkWord fl (wL L).val (2 * t1.val + 1) (64 * (2 * k.val + 1) + 19)) := by
        refine (rv_extract d L g2 (k1_off92 k ⟨1, by decide⟩) _ _ 3 (by decide) _ _).trans ?_
        exact rv_word d L fl (wL L).val (2 * t1.val + 1) 1 (2 * k.val + 1) 19 (by decide) (by omega) (by decide) g2 hR1 _
          (by rw [k1_off92_eq]; show 128 * k.val + 16 * 1 + 1088 + 3 = 1024 * 1 + 64 * (2 * k.val + 1) + 19; omega) _
      have hw_v1811_4 : pair1_lt.sl.v1811_4 d L k g2 = Spec.tcol (blkWord fl (wL L).val (2 * t1.val + 1) (64 * (2 * k.val + 1) + 20)) := by
        refine (rv_extract d L g2 (k1_off92 k ⟨1, by decide⟩) _ _ 4 (by decide) _ _).trans ?_
        exact rv_word d L fl (wL L).val (2 * t1.val + 1) 1 (2 * k.val + 1) 20 (by decide) (by omega) (by decide) g2 hR1 _
          (by rw [k1_off92_eq]; show 128 * k.val + 16 * 1 + 1088 + 4 = 1024 * 1 + 64 * (2 * k.val + 1) + 20; omega) _
      have hw_v1847_4 : pair1_lt.sl.v1847_4 d L k g2 = Spec.tcol (blkWord fl (wL L).val (2 * t1.val + 1) (64 * (2 * k.val + 1) + 21)) := by
        refine (rv_extract d L g2 (k1_off92 k ⟨1, by decide⟩) _ _ 5 (by decide) _ _).trans ?_
        exact rv_word d L fl (wL L).val (2 * t1.val + 1) 1 (2 * k.val + 1) 21 (by decide) (by omega) (by decide) g2 hR1 _
          (by rw [k1_off92_eq]; show 128 * k.val + 16 * 1 + 1088 + 5 = 1024 * 1 + 64 * (2 * k.val + 1) + 21; omega) _
      have hw_v1883_4 : pair1_lt.sl.v1883_4 d L k g2 = Spec.tcol (blkWord fl (wL L).val (2 * t1.val + 1) (64 * (2 * k.val + 1) + 22)) := by
        refine (rv_extract d L g2 (k1_off92 k ⟨1, by decide⟩) _ _ 6 (by decide) _ _).trans ?_
        exact rv_word d L fl (wL L).val (2 * t1.val + 1) 1 (2 * k.val + 1) 22 (by decide) (by omega) (by decide) g2 hR1 _
          (by rw [k1_off92_eq]; show 128 * k.val + 16 * 1 + 1088 + 6 = 1024 * 1 + 64 * (2 * k.val + 1) + 22; omega) _
      have hw_v1919_4 : pair1_lt.sl.v1919_4 d L k g2 = Spec.tcol (blkWord fl (wL L).val (2 * t1.val + 1) (64 * (2 * k.val + 1) + 23)) := by
        refine (rv_extract d L g2 (k1_off92 k ⟨1, by decide⟩) _ _ 7 (by decide) _ _).trans ?_
        exact rv_word d L fl (wL L).val (2 * t1.val + 1) 1 (2 * k.val + 1) 23 (by decide) (by omega) (by decide) g2 hR1 _
          (by rw [k1_off92_eq]; show 128 * k.val + 16 * 1 + 1088 + 7 = 1024 * 1 + 64 * (2 * k.val + 1) + 23; omega) _
      have hw_v1955_4 : pair1_lt.sl.v1955_4 d L k g2 = Spec.tcol (blkWord fl (wL L).val (2 * t1.val + 1) (64 * (2 * k.val + 1) + 24)) := by
        refine (rv_extract d L g2 (k1_off92 k ⟨1, by decide⟩) _ _ 8 (by decide) _ _).trans ?_
        exact rv_word d L fl (wL L).val (2 * t1.val + 1) 1 (2 * k.val + 1) 24 (by decide) (by omega) (by decide) g2 hR1 _
          (by rw [k1_off92_eq]; show 128 * k.val + 16 * 1 + 1088 + 8 = 1024 * 1 + 64 * (2 * k.val + 1) + 24; omega) _
      have hw_v1991_4 : pair1_lt.sl.v1991_4 d L k g2 = Spec.tcol (blkWord fl (wL L).val (2 * t1.val + 1) (64 * (2 * k.val + 1) + 25)) := by
        refine (rv_extract d L g2 (k1_off92 k ⟨1, by decide⟩) _ _ 9 (by decide) _ _).trans ?_
        exact rv_word d L fl (wL L).val (2 * t1.val + 1) 1 (2 * k.val + 1) 25 (by decide) (by omega) (by decide) g2 hR1 _
          (by rw [k1_off92_eq]; show 128 * k.val + 16 * 1 + 1088 + 9 = 1024 * 1 + 64 * (2 * k.val + 1) + 25; omega) _
      have hw_v2027_4 : pair1_lt.sl.v2027_4 d L k g2 = Spec.tcol (blkWord fl (wL L).val (2 * t1.val + 1) (64 * (2 * k.val + 1) + 26)) := by
        refine (rv_extract d L g2 (k1_off92 k ⟨1, by decide⟩) _ _ 10 (by decide) _ _).trans ?_
        exact rv_word d L fl (wL L).val (2 * t1.val + 1) 1 (2 * k.val + 1) 26 (by decide) (by omega) (by decide) g2 hR1 _
          (by rw [k1_off92_eq]; show 128 * k.val + 16 * 1 + 1088 + 10 = 1024 * 1 + 64 * (2 * k.val + 1) + 26; omega) _
      have hw_v2063_4 : pair1_lt.sl.v2063_4 d L k g2 = Spec.tcol (blkWord fl (wL L).val (2 * t1.val + 1) (64 * (2 * k.val + 1) + 27)) := by
        refine (rv_extract d L g2 (k1_off92 k ⟨1, by decide⟩) _ _ 11 (by decide) _ _).trans ?_
        exact rv_word d L fl (wL L).val (2 * t1.val + 1) 1 (2 * k.val + 1) 27 (by decide) (by omega) (by decide) g2 hR1 _
          (by rw [k1_off92_eq]; show 128 * k.val + 16 * 1 + 1088 + 11 = 1024 * 1 + 64 * (2 * k.val + 1) + 27; omega) _
      have hw_v2099_4 : pair1_lt.sl.v2099_4 d L k g2 = Spec.tcol (blkWord fl (wL L).val (2 * t1.val + 1) (64 * (2 * k.val + 1) + 28)) := by
        refine (rv_extract d L g2 (k1_off92 k ⟨1, by decide⟩) _ _ 12 (by decide) _ _).trans ?_
        exact rv_word d L fl (wL L).val (2 * t1.val + 1) 1 (2 * k.val + 1) 28 (by decide) (by omega) (by decide) g2 hR1 _
          (by rw [k1_off92_eq]; show 128 * k.val + 16 * 1 + 1088 + 12 = 1024 * 1 + 64 * (2 * k.val + 1) + 28; omega) _
      have hw_v2135_4 : pair1_lt.sl.v2135_4 d L k g2 = Spec.tcol (blkWord fl (wL L).val (2 * t1.val + 1) (64 * (2 * k.val + 1) + 29)) := by
        refine (rv_extract d L g2 (k1_off92 k ⟨1, by decide⟩) _ _ 13 (by decide) _ _).trans ?_
        exact rv_word d L fl (wL L).val (2 * t1.val + 1) 1 (2 * k.val + 1) 29 (by decide) (by omega) (by decide) g2 hR1 _
          (by rw [k1_off92_eq]; show 128 * k.val + 16 * 1 + 1088 + 13 = 1024 * 1 + 64 * (2 * k.val + 1) + 29; omega) _
      have hw_v2171_4 : pair1_lt.sl.v2171_4 d L k g2 = Spec.tcol (blkWord fl (wL L).val (2 * t1.val + 1) (64 * (2 * k.val + 1) + 30)) := by
        refine (rv_extract d L g2 (k1_off92 k ⟨1, by decide⟩) _ _ 14 (by decide) _ _).trans ?_
        exact rv_word d L fl (wL L).val (2 * t1.val + 1) 1 (2 * k.val + 1) 30 (by decide) (by omega) (by decide) g2 hR1 _
          (by rw [k1_off92_eq]; show 128 * k.val + 16 * 1 + 1088 + 14 = 1024 * 1 + 64 * (2 * k.val + 1) + 30; omega) _
      have hw_v2207_4 : pair1_lt.sl.v2207_4 d L k g2 = Spec.tcol (blkWord fl (wL L).val (2 * t1.val + 1) (64 * (2 * k.val + 1) + 31)) := by
        refine (rv_extract d L g2 (k1_off92 k ⟨1, by decide⟩) _ _ 15 (by decide) _ _).trans ?_
        exact rv_word d L fl (wL L).val (2 * t1.val + 1) 1 (2 * k.val + 1) 31 (by decide) (by omega) (by decide) g2 hR1 _
          (by rw [k1_off92_eq]; show 128 * k.val + 16 * 1 + 1088 + 15 = 1024 * 1 + 64 * (2 * k.val + 1) + 31; omega) _
      have hw_v1667_5 : pair1_lt.sl.v1667_5 d L k g2 = Spec.tcol (blkWord fl (wL L).val (2 * t1.val + 1) (64 * (2 * k.val + 1) + 32)) := by
        refine (rv_extract d L g2 (k1_off92 k ⟨2, by decide⟩) _ _ 0 (by decide) _ _).trans ?_
        exact rv_word d L fl (wL L).val (2 * t1.val + 1) 1 (2 * k.val + 1) 32 (by decide) (by omega) (by decide) g2 hR1 _
          (by rw [k1_off92_eq]; show 128 * k.val + 16 * 2 + 1088 + 0 = 1024 * 1 + 64 * (2 * k.val + 1) + 32; omega) _
      have hw_v1703_5 : pair1_lt.sl.v1703_5 d L k g2 = Spec.tcol (blkWord fl (wL L).val (2 * t1.val + 1) (64 * (2 * k.val + 1) + 33)) := by
        refine (rv_extract d L g2 (k1_off92 k ⟨2, by decide⟩) _ _ 1 (by decide) _ _).trans ?_
        exact rv_word d L fl (wL L).val (2 * t1.val + 1) 1 (2 * k.val + 1) 33 (by decide) (by omega) (by decide) g2 hR1 _
          (by rw [k1_off92_eq]; show 128 * k.val + 16 * 2 + 1088 + 1 = 1024 * 1 + 64 * (2 * k.val + 1) + 33; omega) _
      have hw_v1739_5 : pair1_lt.sl.v1739_5 d L k g2 = Spec.tcol (blkWord fl (wL L).val (2 * t1.val + 1) (64 * (2 * k.val + 1) + 34)) := by
        refine (rv_extract d L g2 (k1_off92 k ⟨2, by decide⟩) _ _ 2 (by decide) _ _).trans ?_
        exact rv_word d L fl (wL L).val (2 * t1.val + 1) 1 (2 * k.val + 1) 34 (by decide) (by omega) (by decide) g2 hR1 _
          (by rw [k1_off92_eq]; show 128 * k.val + 16 * 2 + 1088 + 2 = 1024 * 1 + 64 * (2 * k.val + 1) + 34; omega) _
      have hw_v1775_5 : pair1_lt.sl.v1775_5 d L k g2 = Spec.tcol (blkWord fl (wL L).val (2 * t1.val + 1) (64 * (2 * k.val + 1) + 35)) := by
        refine (rv_extract d L g2 (k1_off92 k ⟨2, by decide⟩) _ _ 3 (by decide) _ _).trans ?_
        exact rv_word d L fl (wL L).val (2 * t1.val + 1) 1 (2 * k.val + 1) 35 (by decide) (by omega) (by decide) g2 hR1 _
          (by rw [k1_off92_eq]; show 128 * k.val + 16 * 2 + 1088 + 3 = 1024 * 1 + 64 * (2 * k.val + 1) + 35; omega) _
      have hw_v1811_5 : pair1_lt.sl.v1811_5 d L k g2 = Spec.tcol (blkWord fl (wL L).val (2 * t1.val + 1) (64 * (2 * k.val + 1) + 36)) := by
        refine (rv_extract d L g2 (k1_off92 k ⟨2, by decide⟩) _ _ 4 (by decide) _ _).trans ?_
        exact rv_word d L fl (wL L).val (2 * t1.val + 1) 1 (2 * k.val + 1) 36 (by decide) (by omega) (by decide) g2 hR1 _
          (by rw [k1_off92_eq]; show 128 * k.val + 16 * 2 + 1088 + 4 = 1024 * 1 + 64 * (2 * k.val + 1) + 36; omega) _
      have hw_v1847_5 : pair1_lt.sl.v1847_5 d L k g2 = Spec.tcol (blkWord fl (wL L).val (2 * t1.val + 1) (64 * (2 * k.val + 1) + 37)) := by
        refine (rv_extract d L g2 (k1_off92 k ⟨2, by decide⟩) _ _ 5 (by decide) _ _).trans ?_
        exact rv_word d L fl (wL L).val (2 * t1.val + 1) 1 (2 * k.val + 1) 37 (by decide) (by omega) (by decide) g2 hR1 _
          (by rw [k1_off92_eq]; show 128 * k.val + 16 * 2 + 1088 + 5 = 1024 * 1 + 64 * (2 * k.val + 1) + 37; omega) _
      have hw_v1883_5 : pair1_lt.sl.v1883_5 d L k g2 = Spec.tcol (blkWord fl (wL L).val (2 * t1.val + 1) (64 * (2 * k.val + 1) + 38)) := by
        refine (rv_extract d L g2 (k1_off92 k ⟨2, by decide⟩) _ _ 6 (by decide) _ _).trans ?_
        exact rv_word d L fl (wL L).val (2 * t1.val + 1) 1 (2 * k.val + 1) 38 (by decide) (by omega) (by decide) g2 hR1 _
          (by rw [k1_off92_eq]; show 128 * k.val + 16 * 2 + 1088 + 6 = 1024 * 1 + 64 * (2 * k.val + 1) + 38; omega) _
      have hw_v1919_5 : pair1_lt.sl.v1919_5 d L k g2 = Spec.tcol (blkWord fl (wL L).val (2 * t1.val + 1) (64 * (2 * k.val + 1) + 39)) := by
        refine (rv_extract d L g2 (k1_off92 k ⟨2, by decide⟩) _ _ 7 (by decide) _ _).trans ?_
        exact rv_word d L fl (wL L).val (2 * t1.val + 1) 1 (2 * k.val + 1) 39 (by decide) (by omega) (by decide) g2 hR1 _
          (by rw [k1_off92_eq]; show 128 * k.val + 16 * 2 + 1088 + 7 = 1024 * 1 + 64 * (2 * k.val + 1) + 39; omega) _
      have hw_v1955_5 : pair1_lt.sl.v1955_5 d L k g2 = Spec.tcol (blkWord fl (wL L).val (2 * t1.val + 1) (64 * (2 * k.val + 1) + 40)) := by
        refine (rv_extract d L g2 (k1_off92 k ⟨2, by decide⟩) _ _ 8 (by decide) _ _).trans ?_
        exact rv_word d L fl (wL L).val (2 * t1.val + 1) 1 (2 * k.val + 1) 40 (by decide) (by omega) (by decide) g2 hR1 _
          (by rw [k1_off92_eq]; show 128 * k.val + 16 * 2 + 1088 + 8 = 1024 * 1 + 64 * (2 * k.val + 1) + 40; omega) _
      have hw_v1991_5 : pair1_lt.sl.v1991_5 d L k g2 = Spec.tcol (blkWord fl (wL L).val (2 * t1.val + 1) (64 * (2 * k.val + 1) + 41)) := by
        refine (rv_extract d L g2 (k1_off92 k ⟨2, by decide⟩) _ _ 9 (by decide) _ _).trans ?_
        exact rv_word d L fl (wL L).val (2 * t1.val + 1) 1 (2 * k.val + 1) 41 (by decide) (by omega) (by decide) g2 hR1 _
          (by rw [k1_off92_eq]; show 128 * k.val + 16 * 2 + 1088 + 9 = 1024 * 1 + 64 * (2 * k.val + 1) + 41; omega) _
      have hw_v2027_5 : pair1_lt.sl.v2027_5 d L k g2 = Spec.tcol (blkWord fl (wL L).val (2 * t1.val + 1) (64 * (2 * k.val + 1) + 42)) := by
        refine (rv_extract d L g2 (k1_off92 k ⟨2, by decide⟩) _ _ 10 (by decide) _ _).trans ?_
        exact rv_word d L fl (wL L).val (2 * t1.val + 1) 1 (2 * k.val + 1) 42 (by decide) (by omega) (by decide) g2 hR1 _
          (by rw [k1_off92_eq]; show 128 * k.val + 16 * 2 + 1088 + 10 = 1024 * 1 + 64 * (2 * k.val + 1) + 42; omega) _
      have hw_v2063_5 : pair1_lt.sl.v2063_5 d L k g2 = Spec.tcol (blkWord fl (wL L).val (2 * t1.val + 1) (64 * (2 * k.val + 1) + 43)) := by
        refine (rv_extract d L g2 (k1_off92 k ⟨2, by decide⟩) _ _ 11 (by decide) _ _).trans ?_
        exact rv_word d L fl (wL L).val (2 * t1.val + 1) 1 (2 * k.val + 1) 43 (by decide) (by omega) (by decide) g2 hR1 _
          (by rw [k1_off92_eq]; show 128 * k.val + 16 * 2 + 1088 + 11 = 1024 * 1 + 64 * (2 * k.val + 1) + 43; omega) _
      have hw_v2099_5 : pair1_lt.sl.v2099_5 d L k g2 = Spec.tcol (blkWord fl (wL L).val (2 * t1.val + 1) (64 * (2 * k.val + 1) + 44)) := by
        refine (rv_extract d L g2 (k1_off92 k ⟨2, by decide⟩) _ _ 12 (by decide) _ _).trans ?_
        exact rv_word d L fl (wL L).val (2 * t1.val + 1) 1 (2 * k.val + 1) 44 (by decide) (by omega) (by decide) g2 hR1 _
          (by rw [k1_off92_eq]; show 128 * k.val + 16 * 2 + 1088 + 12 = 1024 * 1 + 64 * (2 * k.val + 1) + 44; omega) _
      have hw_v2135_5 : pair1_lt.sl.v2135_5 d L k g2 = Spec.tcol (blkWord fl (wL L).val (2 * t1.val + 1) (64 * (2 * k.val + 1) + 45)) := by
        refine (rv_extract d L g2 (k1_off92 k ⟨2, by decide⟩) _ _ 13 (by decide) _ _).trans ?_
        exact rv_word d L fl (wL L).val (2 * t1.val + 1) 1 (2 * k.val + 1) 45 (by decide) (by omega) (by decide) g2 hR1 _
          (by rw [k1_off92_eq]; show 128 * k.val + 16 * 2 + 1088 + 13 = 1024 * 1 + 64 * (2 * k.val + 1) + 45; omega) _
      have hw_v2171_5 : pair1_lt.sl.v2171_5 d L k g2 = Spec.tcol (blkWord fl (wL L).val (2 * t1.val + 1) (64 * (2 * k.val + 1) + 46)) := by
        refine (rv_extract d L g2 (k1_off92 k ⟨2, by decide⟩) _ _ 14 (by decide) _ _).trans ?_
        exact rv_word d L fl (wL L).val (2 * t1.val + 1) 1 (2 * k.val + 1) 46 (by decide) (by omega) (by decide) g2 hR1 _
          (by rw [k1_off92_eq]; show 128 * k.val + 16 * 2 + 1088 + 14 = 1024 * 1 + 64 * (2 * k.val + 1) + 46; omega) _
      have hw_v2207_5 : pair1_lt.sl.v2207_5 d L k g2 = Spec.tcol (blkWord fl (wL L).val (2 * t1.val + 1) (64 * (2 * k.val + 1) + 47)) := by
        refine (rv_extract d L g2 (k1_off92 k ⟨2, by decide⟩) _ _ 15 (by decide) _ _).trans ?_
        exact rv_word d L fl (wL L).val (2 * t1.val + 1) 1 (2 * k.val + 1) 47 (by decide) (by omega) (by decide) g2 hR1 _
          (by rw [k1_off92_eq]; show 128 * k.val + 16 * 2 + 1088 + 15 = 1024 * 1 + 64 * (2 * k.val + 1) + 47; omega) _
      have hw_v1572 : pair1_lt.sl.v1572 d L k g2 = Spec.tcol (blkWord fl (wL L).val (2 * t1.val + 1) (64 * (2 * k.val + 1) + 48)) := by
        refine (rv_extract d L g2 (k1_off109 k) _ _ 0 (by decide) _ _).trans ?_
        exact rv_word d L fl (wL L).val (2 * t1.val + 1) 1 (2 * k.val + 1) 48 (by decide) (by omega) (by decide) g2 hR1 _
          (by rw [k1_off109_eq]; show 128 * k.val + 1136 + 0 = 1024 * 1 + 64 * (2 * k.val + 1) + 48; omega) _
      have hw_v1606 : pair1_lt.sl.v1606 d L k g2 = Spec.tcol (blkWord fl (wL L).val (2 * t1.val + 1) (64 * (2 * k.val + 1) + 49)) := by
        refine (rv_extract d L g2 (k1_off109 k) _ _ 1 (by decide) _ _).trans ?_
        exact rv_word d L fl (wL L).val (2 * t1.val + 1) 1 (2 * k.val + 1) 49 (by decide) (by omega) (by decide) g2 hR1 _
          (by rw [k1_off109_eq]; show 128 * k.val + 1136 + 1 = 1024 * 1 + 64 * (2 * k.val + 1) + 49; omega) _
      have a_v1445_A0 : pair1_lt.sl.v1445 = AccMath.accVec (rowF fl tab (wL L).val (2 * t1.val + 1) (2 * k.val)) (offF fl (wL L).val (2 * t1.val + 1) (2 * k.val)) 0 0 := acc_zero fl tab (wL L).val (2 * t1.val + 1) (2 * k.val) 0
      have a_v1675 : pair1_lt.sl.v1675 d L tab k r g1 g2 hR hin = AccMath.accVec (rowF fl tab (wL L).val (2 * t1.val + 1) (2 * k.val)) (offF fl (wL L).val (2 * t1.val + 1) (2 * k.val)) 0 1 := by
        rw [show pair1_lt.sl.v1675 d L tab k r g1 g2 hR hin = addf (pair1_lt.sl.v1445) (pair1_lt.sl.v1674 d L tab k r g1 g2 hR hin) from rfl, a_v1445_A0]
        exact acc_step d L fl tab (wL L).val (2 * t1.val + 1) (2 * k.val) 0 _ hRA ⟨0, by decide⟩ ⟨0, by decide⟩ _ rfl _ hw_v1667 _ (k1_off66_form ..) _ _
      have a_v1711 : pair1_lt.sl.v1711 d L tab k r g1 g2 hR hin = AccMath.accVec (rowF fl tab (wL L).val (2 * t1.val + 1) (2 * k.val)) (offF fl (wL L).val (2 * t1.val + 1) (2 * k.val)) 0 2 := by
        rw [show pair1_lt.sl.v1711 d L tab k r g1 g2 hR hin = addf (pair1_lt.sl.v1675 d L tab k r g1 g2 hR hin) (pair1_lt.sl.v1710 d L tab k r g1 g2 hR hin) from rfl, a_v1675]
        exact acc_step d L fl tab (wL L).val (2 * t1.val + 1) (2 * k.val) 0 _ hRA ⟨1, by decide⟩ ⟨0, by decide⟩ _ rfl _ hw_v1703 _ (k1_off67_form ..) _ _
      have a_v1747 : pair1_lt.sl.v1747 d L tab k r g1 g2 hR hin = AccMath.accVec (rowF fl tab (wL L).val (2 * t1.val + 1) (2 * k.val)) (offF fl (wL L).val (2 * t1.val + 1) (2 * k.val)) 0 3 := by
        rw [show pair1_lt.sl.v1747 d L tab k r g1 g2 hR hin = addf (pair1_lt.sl.v1711 d L tab k r g1 g2 hR hin) (pair1_lt.sl.v1746 d L tab k r g1 g2 hR hin) from rfl, a_v1711]
        exact acc_step d L fl tab (wL L).val (2 * t1.val + 1) (2 * k.val) 0 _ hRA ⟨2, by decide⟩ ⟨0, by decide⟩ _ rfl _ hw_v1739 _ (k1_off68_form ..) _ _
      have a_v1783 : pair1_lt.sl.v1783 d L tab k r g1 g2 hR hin = AccMath.accVec (rowF fl tab (wL L).val (2 * t1.val + 1) (2 * k.val)) (offF fl (wL L).val (2 * t1.val + 1) (2 * k.val)) 0 4 := by
        rw [show pair1_lt.sl.v1783 d L tab k r g1 g2 hR hin = addf (pair1_lt.sl.v1747 d L tab k r g1 g2 hR hin) (pair1_lt.sl.v1782 d L tab k r g1 g2 hR hin) from rfl, a_v1747]
        exact acc_step d L fl tab (wL L).val (2 * t1.val + 1) (2 * k.val) 0 _ hRA ⟨3, by decide⟩ ⟨0, by decide⟩ _ rfl _ hw_v1775 _ (k1_off69_form ..) _ _
      have a_v1819 : pair1_lt.sl.v1819 d L tab k r g1 g2 hR hin = AccMath.accVec (rowF fl tab (wL L).val (2 * t1.val + 1) (2 * k.val)) (offF fl (wL L).val (2 * t1.val + 1) (2 * k.val)) 0 5 := by
        rw [show pair1_lt.sl.v1819 d L tab k r g1 g2 hR hin = addf (pair1_lt.sl.v1783 d L tab k r g1 g2 hR hin) (pair1_lt.sl.v1818 d L tab k r g1 g2 hR hin) from rfl, a_v1783]
        exact acc_step d L fl tab (wL L).val (2 * t1.val + 1) (2 * k.val) 0 _ hRA ⟨4, by decide⟩ ⟨0, by decide⟩ _ rfl _ hw_v1811 _ (k1_off70_form ..) _ _
      have a_v1855 : pair1_lt.sl.v1855 d L tab k r g1 g2 hR hin = AccMath.accVec (rowF fl tab (wL L).val (2 * t1.val + 1) (2 * k.val)) (offF fl (wL L).val (2 * t1.val + 1) (2 * k.val)) 0 6 := by
        rw [show pair1_lt.sl.v1855 d L tab k r g1 g2 hR hin = addf (pair1_lt.sl.v1819 d L tab k r g1 g2 hR hin) (pair1_lt.sl.v1854 d L tab k r g1 g2 hR hin) from rfl, a_v1819]
        exact acc_step d L fl tab (wL L).val (2 * t1.val + 1) (2 * k.val) 0 _ hRA ⟨5, by decide⟩ ⟨0, by decide⟩ _ rfl _ hw_v1847 _ (k1_off71_form ..) _ _
      have a_v1891 : pair1_lt.sl.v1891 d L tab k r g1 g2 hR hin = AccMath.accVec (rowF fl tab (wL L).val (2 * t1.val + 1) (2 * k.val)) (offF fl (wL L).val (2 * t1.val + 1) (2 * k.val)) 0 7 := by
        rw [show pair1_lt.sl.v1891 d L tab k r g1 g2 hR hin = addf (pair1_lt.sl.v1855 d L tab k r g1 g2 hR hin) (pair1_lt.sl.v1890 d L tab k r g1 g2 hR hin) from rfl, a_v1855]
        exact acc_step d L fl tab (wL L).val (2 * t1.val + 1) (2 * k.val) 0 _ hRA ⟨6, by decide⟩ ⟨0, by decide⟩ _ rfl _ hw_v1883 _ (k1_off72_form ..) _ _
      have a_v1927 : pair1_lt.sl.v1927 d L tab k r g1 g2 hR hin = AccMath.accVec (rowF fl tab (wL L).val (2 * t1.val + 1) (2 * k.val)) (offF fl (wL L).val (2 * t1.val + 1) (2 * k.val)) 0 8 := by
        rw [show pair1_lt.sl.v1927 d L tab k r g1 g2 hR hin = addf (pair1_lt.sl.v1891 d L tab k r g1 g2 hR hin) (pair1_lt.sl.v1926 d L tab k r g1 g2 hR hin) from rfl, a_v1891]
        exact acc_step d L fl tab (wL L).val (2 * t1.val + 1) (2 * k.val) 0 _ hRA ⟨7, by decide⟩ ⟨0, by decide⟩ _ rfl _ hw_v1919 _ (k1_off73_form ..) _ _
      have a_v1963 : pair1_lt.sl.v1963 d L tab k r g1 g2 hR hin = AccMath.accVec (rowF fl tab (wL L).val (2 * t1.val + 1) (2 * k.val)) (offF fl (wL L).val (2 * t1.val + 1) (2 * k.val)) 0 9 := by
        rw [show pair1_lt.sl.v1963 d L tab k r g1 g2 hR hin = addf (pair1_lt.sl.v1927 d L tab k r g1 g2 hR hin) (pair1_lt.sl.v1962 d L tab k r g1 g2 hR hin) from rfl, a_v1927]
        exact acc_step d L fl tab (wL L).val (2 * t1.val + 1) (2 * k.val) 0 _ hRA ⟨8, by decide⟩ ⟨0, by decide⟩ _ rfl _ hw_v1955 _ (k1_off74_form ..) _ _
      have a_v1999 : pair1_lt.sl.v1999 d L tab k r g1 g2 hR hin = AccMath.accVec (rowF fl tab (wL L).val (2 * t1.val + 1) (2 * k.val)) (offF fl (wL L).val (2 * t1.val + 1) (2 * k.val)) 0 10 := by
        rw [show pair1_lt.sl.v1999 d L tab k r g1 g2 hR hin = addf (pair1_lt.sl.v1963 d L tab k r g1 g2 hR hin) (pair1_lt.sl.v1998 d L tab k r g1 g2 hR hin) from rfl, a_v1963]
        exact acc_step d L fl tab (wL L).val (2 * t1.val + 1) (2 * k.val) 0 _ hRA ⟨9, by decide⟩ ⟨0, by decide⟩ _ rfl _ hw_v1991 _ (k1_off75_form ..) _ _
      have a_v2035 : pair1_lt.sl.v2035 d L tab k r g1 g2 hR hin = AccMath.accVec (rowF fl tab (wL L).val (2 * t1.val + 1) (2 * k.val)) (offF fl (wL L).val (2 * t1.val + 1) (2 * k.val)) 0 11 := by
        rw [show pair1_lt.sl.v2035 d L tab k r g1 g2 hR hin = addf (pair1_lt.sl.v1999 d L tab k r g1 g2 hR hin) (pair1_lt.sl.v2034 d L tab k r g1 g2 hR hin) from rfl, a_v1999]
        exact acc_step d L fl tab (wL L).val (2 * t1.val + 1) (2 * k.val) 0 _ hRA ⟨10, by decide⟩ ⟨0, by decide⟩ _ rfl _ hw_v2027 _ (k1_off76_form ..) _ _
      have a_v2071 : pair1_lt.sl.v2071 d L tab k r g1 g2 hR hin = AccMath.accVec (rowF fl tab (wL L).val (2 * t1.val + 1) (2 * k.val)) (offF fl (wL L).val (2 * t1.val + 1) (2 * k.val)) 0 12 := by
        rw [show pair1_lt.sl.v2071 d L tab k r g1 g2 hR hin = addf (pair1_lt.sl.v2035 d L tab k r g1 g2 hR hin) (pair1_lt.sl.v2070 d L tab k r g1 g2 hR hin) from rfl, a_v2035]
        exact acc_step d L fl tab (wL L).val (2 * t1.val + 1) (2 * k.val) 0 _ hRA ⟨11, by decide⟩ ⟨0, by decide⟩ _ rfl _ hw_v2063 _ (k1_off77_form ..) _ _
      have a_v2107 : pair1_lt.sl.v2107 d L tab k r g1 g2 hR hin = AccMath.accVec (rowF fl tab (wL L).val (2 * t1.val + 1) (2 * k.val)) (offF fl (wL L).val (2 * t1.val + 1) (2 * k.val)) 0 13 := by
        rw [show pair1_lt.sl.v2107 d L tab k r g1 g2 hR hin = addf (pair1_lt.sl.v2071 d L tab k r g1 g2 hR hin) (pair1_lt.sl.v2106 d L tab k r g1 g2 hR hin) from rfl, a_v2071]
        exact acc_step d L fl tab (wL L).val (2 * t1.val + 1) (2 * k.val) 0 _ hRA ⟨12, by decide⟩ ⟨0, by decide⟩ _ rfl _ hw_v2099 _ (k1_off78_form ..) _ _
      have a_v2143 : pair1_lt.sl.v2143 d L tab k r g1 g2 hR hin = AccMath.accVec (rowF fl tab (wL L).val (2 * t1.val + 1) (2 * k.val)) (offF fl (wL L).val (2 * t1.val + 1) (2 * k.val)) 0 14 := by
        rw [show pair1_lt.sl.v2143 d L tab k r g1 g2 hR hin = addf (pair1_lt.sl.v2107 d L tab k r g1 g2 hR hin) (pair1_lt.sl.v2142 d L tab k r g1 g2 hR hin) from rfl, a_v2107]
        exact acc_step d L fl tab (wL L).val (2 * t1.val + 1) (2 * k.val) 0 _ hRA ⟨13, by decide⟩ ⟨0, by decide⟩ _ rfl _ hw_v2135 _ (k1_off79_form ..) _ _
      have a_v2179 : pair1_lt.sl.v2179 d L tab k r g1 g2 hR hin = AccMath.accVec (rowF fl tab (wL L).val (2 * t1.val + 1) (2 * k.val)) (offF fl (wL L).val (2 * t1.val + 1) (2 * k.val)) 0 15 := by
        rw [show pair1_lt.sl.v2179 d L tab k r g1 g2 hR hin = addf (pair1_lt.sl.v2143 d L tab k r g1 g2 hR hin) (pair1_lt.sl.v2178 d L tab k r g1 g2 hR hin) from rfl, a_v2143]
        exact acc_step d L fl tab (wL L).val (2 * t1.val + 1) (2 * k.val) 0 _ hRA ⟨14, by decide⟩ ⟨0, by decide⟩ _ rfl _ hw_v2171 _ (k1_off80_form ..) _ _
      have a_v2215 : pair1_lt.sl.v2215 d L tab k r g1 g2 hR hin = AccMath.accVec (rowF fl tab (wL L).val (2 * t1.val + 1) (2 * k.val)) (offF fl (wL L).val (2 * t1.val + 1) (2 * k.val)) 0 16 := by
        rw [show pair1_lt.sl.v2215 d L tab k r g1 g2 hR hin = addf (pair1_lt.sl.v2179 d L tab k r g1 g2 hR hin) (pair1_lt.sl.v2214 d L tab k r g1 g2 hR hin) from rfl, a_v2179]
        exact acc_step d L fl tab (wL L).val (2 * t1.val + 1) (2 * k.val) 0 _ hRA ⟨15, by decide⟩ ⟨0, by decide⟩ _ rfl _ hw_v2207 _ (k1_off81_form ..) _ _
      have a_v1675_1 : pair1_lt.sl.v1675_1 d L tab k r g1 g2 hR hin = AccMath.accVec (rowF fl tab (wL L).val (2 * t1.val + 1) (2 * k.val)) (offF fl (wL L).val (2 * t1.val + 1) (2 * k.val)) 0 17 := by
        rw [show pair1_lt.sl.v1675_1 d L tab k r g1 g2 hR hin = addf (pair1_lt.sl.v2215 d L tab k r g1 g2 hR hin) (pair1_lt.sl.v1674_1 d L tab k r g1 g2 hR hin) from rfl, a_v2215]
        exact acc_step d L fl tab (wL L).val (2 * t1.val + 1) (2 * k.val) 0 _ hRA ⟨16, by decide⟩ ⟨0, by decide⟩ _ rfl _ hw_v1667_1 _ (k1_off66_form ..) _ _
      have a_v1711_1 : pair1_lt.sl.v1711_1 d L tab k r g1 g2 hR hin = AccMath.accVec (rowF fl tab (wL L).val (2 * t1.val + 1) (2 * k.val)) (offF fl (wL L).val (2 * t1.val + 1) (2 * k.val)) 0 18 := by
        rw [show pair1_lt.sl.v1711_1 d L tab k r g1 g2 hR hin = addf (pair1_lt.sl.v1675_1 d L tab k r g1 g2 hR hin) (pair1_lt.sl.v1710_1 d L tab k r g1 g2 hR hin) from rfl, a_v1675_1]
        exact acc_step d L fl tab (wL L).val (2 * t1.val + 1) (2 * k.val) 0 _ hRA ⟨17, by decide⟩ ⟨0, by decide⟩ _ rfl _ hw_v1703_1 _ (k1_off67_form ..) _ _
      have a_v1747_1 : pair1_lt.sl.v1747_1 d L tab k r g1 g2 hR hin = AccMath.accVec (rowF fl tab (wL L).val (2 * t1.val + 1) (2 * k.val)) (offF fl (wL L).val (2 * t1.val + 1) (2 * k.val)) 0 19 := by
        rw [show pair1_lt.sl.v1747_1 d L tab k r g1 g2 hR hin = addf (pair1_lt.sl.v1711_1 d L tab k r g1 g2 hR hin) (pair1_lt.sl.v1746_1 d L tab k r g1 g2 hR hin) from rfl, a_v1711_1]
        exact acc_step d L fl tab (wL L).val (2 * t1.val + 1) (2 * k.val) 0 _ hRA ⟨18, by decide⟩ ⟨0, by decide⟩ _ rfl _ hw_v1739_1 _ (k1_off68_form ..) _ _
      have a_v1783_1 : pair1_lt.sl.v1783_1 d L tab k r g1 g2 hR hin = AccMath.accVec (rowF fl tab (wL L).val (2 * t1.val + 1) (2 * k.val)) (offF fl (wL L).val (2 * t1.val + 1) (2 * k.val)) 0 20 := by
        rw [show pair1_lt.sl.v1783_1 d L tab k r g1 g2 hR hin = addf (pair1_lt.sl.v1747_1 d L tab k r g1 g2 hR hin) (pair1_lt.sl.v1782_1 d L tab k r g1 g2 hR hin) from rfl, a_v1747_1]
        exact acc_step d L fl tab (wL L).val (2 * t1.val + 1) (2 * k.val) 0 _ hRA ⟨19, by decide⟩ ⟨0, by decide⟩ _ rfl _ hw_v1775_1 _ (k1_off69_form ..) _ _
      have a_v1819_1 : pair1_lt.sl.v1819_1 d L tab k r g1 g2 hR hin = AccMath.accVec (rowF fl tab (wL L).val (2 * t1.val + 1) (2 * k.val)) (offF fl (wL L).val (2 * t1.val + 1) (2 * k.val)) 0 21 := by
        rw [show pair1_lt.sl.v1819_1 d L tab k r g1 g2 hR hin = addf (pair1_lt.sl.v1783_1 d L tab k r g1 g2 hR hin) (pair1_lt.sl.v1818_1 d L tab k r g1 g2 hR hin) from rfl, a_v1783_1]
        exact acc_step d L fl tab (wL L).val (2 * t1.val + 1) (2 * k.val) 0 _ hRA ⟨20, by decide⟩ ⟨0, by decide⟩ _ rfl _ hw_v1811_1 _ (k1_off70_form ..) _ _
      have a_v1855_1 : pair1_lt.sl.v1855_1 d L tab k r g1 g2 hR hin = AccMath.accVec (rowF fl tab (wL L).val (2 * t1.val + 1) (2 * k.val)) (offF fl (wL L).val (2 * t1.val + 1) (2 * k.val)) 0 22 := by
        rw [show pair1_lt.sl.v1855_1 d L tab k r g1 g2 hR hin = addf (pair1_lt.sl.v1819_1 d L tab k r g1 g2 hR hin) (pair1_lt.sl.v1854_1 d L tab k r g1 g2 hR hin) from rfl, a_v1819_1]
        exact acc_step d L fl tab (wL L).val (2 * t1.val + 1) (2 * k.val) 0 _ hRA ⟨21, by decide⟩ ⟨0, by decide⟩ _ rfl _ hw_v1847_1 _ (k1_off71_form ..) _ _
      have a_v1891_1 : pair1_lt.sl.v1891_1 d L tab k r g1 g2 hR hin = AccMath.accVec (rowF fl tab (wL L).val (2 * t1.val + 1) (2 * k.val)) (offF fl (wL L).val (2 * t1.val + 1) (2 * k.val)) 0 23 := by
        rw [show pair1_lt.sl.v1891_1 d L tab k r g1 g2 hR hin = addf (pair1_lt.sl.v1855_1 d L tab k r g1 g2 hR hin) (pair1_lt.sl.v1890_1 d L tab k r g1 g2 hR hin) from rfl, a_v1855_1]
        exact acc_step d L fl tab (wL L).val (2 * t1.val + 1) (2 * k.val) 0 _ hRA ⟨22, by decide⟩ ⟨0, by decide⟩ _ rfl _ hw_v1883_1 _ (k1_off72_form ..) _ _
      have a_v1927_1 : pair1_lt.sl.v1927_1 d L tab k r g1 g2 hR hin = AccMath.accVec (rowF fl tab (wL L).val (2 * t1.val + 1) (2 * k.val)) (offF fl (wL L).val (2 * t1.val + 1) (2 * k.val)) 0 24 := by
        rw [show pair1_lt.sl.v1927_1 d L tab k r g1 g2 hR hin = addf (pair1_lt.sl.v1891_1 d L tab k r g1 g2 hR hin) (pair1_lt.sl.v1926_1 d L tab k r g1 g2 hR hin) from rfl, a_v1891_1]
        exact acc_step d L fl tab (wL L).val (2 * t1.val + 1) (2 * k.val) 0 _ hRA ⟨23, by decide⟩ ⟨0, by decide⟩ _ rfl _ hw_v1919_1 _ (k1_off73_form ..) _ _
      have a_v1963_1 : pair1_lt.sl.v1963_1 d L tab k r g1 g2 hR hin = AccMath.accVec (rowF fl tab (wL L).val (2 * t1.val + 1) (2 * k.val)) (offF fl (wL L).val (2 * t1.val + 1) (2 * k.val)) 0 25 := by
        rw [show pair1_lt.sl.v1963_1 d L tab k r g1 g2 hR hin = addf (pair1_lt.sl.v1927_1 d L tab k r g1 g2 hR hin) (pair1_lt.sl.v1962_1 d L tab k r g1 g2 hR hin) from rfl, a_v1927_1]
        exact acc_step d L fl tab (wL L).val (2 * t1.val + 1) (2 * k.val) 0 _ hRA ⟨24, by decide⟩ ⟨0, by decide⟩ _ rfl _ hw_v1955_1 _ (k1_off74_form ..) _ _
      have a_v1999_1 : pair1_lt.sl.v1999_1 d L tab k r g1 g2 hR hin = AccMath.accVec (rowF fl tab (wL L).val (2 * t1.val + 1) (2 * k.val)) (offF fl (wL L).val (2 * t1.val + 1) (2 * k.val)) 0 26 := by
        rw [show pair1_lt.sl.v1999_1 d L tab k r g1 g2 hR hin = addf (pair1_lt.sl.v1963_1 d L tab k r g1 g2 hR hin) (pair1_lt.sl.v1998_1 d L tab k r g1 g2 hR hin) from rfl, a_v1963_1]
        exact acc_step d L fl tab (wL L).val (2 * t1.val + 1) (2 * k.val) 0 _ hRA ⟨25, by decide⟩ ⟨0, by decide⟩ _ rfl _ hw_v1991_1 _ (k1_off75_form ..) _ _
      have a_v2035_1 : pair1_lt.sl.v2035_1 d L tab k r g1 g2 hR hin = AccMath.accVec (rowF fl tab (wL L).val (2 * t1.val + 1) (2 * k.val)) (offF fl (wL L).val (2 * t1.val + 1) (2 * k.val)) 0 27 := by
        rw [show pair1_lt.sl.v2035_1 d L tab k r g1 g2 hR hin = addf (pair1_lt.sl.v1999_1 d L tab k r g1 g2 hR hin) (pair1_lt.sl.v2034_1 d L tab k r g1 g2 hR hin) from rfl, a_v1999_1]
        exact acc_step d L fl tab (wL L).val (2 * t1.val + 1) (2 * k.val) 0 _ hRA ⟨26, by decide⟩ ⟨0, by decide⟩ _ rfl _ hw_v2027_1 _ (k1_off76_form ..) _ _
      have a_v2071_1 : pair1_lt.sl.v2071_1 d L tab k r g1 g2 hR hin = AccMath.accVec (rowF fl tab (wL L).val (2 * t1.val + 1) (2 * k.val)) (offF fl (wL L).val (2 * t1.val + 1) (2 * k.val)) 0 28 := by
        rw [show pair1_lt.sl.v2071_1 d L tab k r g1 g2 hR hin = addf (pair1_lt.sl.v2035_1 d L tab k r g1 g2 hR hin) (pair1_lt.sl.v2070_1 d L tab k r g1 g2 hR hin) from rfl, a_v2035_1]
        exact acc_step d L fl tab (wL L).val (2 * t1.val + 1) (2 * k.val) 0 _ hRA ⟨27, by decide⟩ ⟨0, by decide⟩ _ rfl _ hw_v2063_1 _ (k1_off77_form ..) _ _
      have a_v2107_1 : pair1_lt.sl.v2107_1 d L tab k r g1 g2 hR hin = AccMath.accVec (rowF fl tab (wL L).val (2 * t1.val + 1) (2 * k.val)) (offF fl (wL L).val (2 * t1.val + 1) (2 * k.val)) 0 29 := by
        rw [show pair1_lt.sl.v2107_1 d L tab k r g1 g2 hR hin = addf (pair1_lt.sl.v2071_1 d L tab k r g1 g2 hR hin) (pair1_lt.sl.v2106_1 d L tab k r g1 g2 hR hin) from rfl, a_v2071_1]
        exact acc_step d L fl tab (wL L).val (2 * t1.val + 1) (2 * k.val) 0 _ hRA ⟨28, by decide⟩ ⟨0, by decide⟩ _ rfl _ hw_v2099_1 _ (k1_off78_form ..) _ _
      have a_v2143_1 : pair1_lt.sl.v2143_1 d L tab k r g1 g2 hR hin = AccMath.accVec (rowF fl tab (wL L).val (2 * t1.val + 1) (2 * k.val)) (offF fl (wL L).val (2 * t1.val + 1) (2 * k.val)) 0 30 := by
        rw [show pair1_lt.sl.v2143_1 d L tab k r g1 g2 hR hin = addf (pair1_lt.sl.v2107_1 d L tab k r g1 g2 hR hin) (pair1_lt.sl.v2142_1 d L tab k r g1 g2 hR hin) from rfl, a_v2107_1]
        exact acc_step d L fl tab (wL L).val (2 * t1.val + 1) (2 * k.val) 0 _ hRA ⟨29, by decide⟩ ⟨0, by decide⟩ _ rfl _ hw_v2135_1 _ (k1_off79_form ..) _ _
      have a_v2179_1 : pair1_lt.sl.v2179_1 d L tab k r g1 g2 hR hin = AccMath.accVec (rowF fl tab (wL L).val (2 * t1.val + 1) (2 * k.val)) (offF fl (wL L).val (2 * t1.val + 1) (2 * k.val)) 0 31 := by
        rw [show pair1_lt.sl.v2179_1 d L tab k r g1 g2 hR hin = addf (pair1_lt.sl.v2143_1 d L tab k r g1 g2 hR hin) (pair1_lt.sl.v2178_1 d L tab k r g1 g2 hR hin) from rfl, a_v2143_1]
        exact acc_step d L fl tab (wL L).val (2 * t1.val + 1) (2 * k.val) 0 _ hRA ⟨30, by decide⟩ ⟨0, by decide⟩ _ rfl _ hw_v2171_1 _ (k1_off80_form ..) _ _
      have a_v2215_1 : pair1_lt.sl.v2215_1 d L tab k r g1 g2 hR hin = AccMath.accVec (rowF fl tab (wL L).val (2 * t1.val + 1) (2 * k.val)) (offF fl (wL L).val (2 * t1.val + 1) (2 * k.val)) 0 32 := by
        rw [show pair1_lt.sl.v2215_1 d L tab k r g1 g2 hR hin = addf (pair1_lt.sl.v2179_1 d L tab k r g1 g2 hR hin) (pair1_lt.sl.v2214_1 d L tab k r g1 g2 hR hin) from rfl, a_v2179_1]
        exact acc_step d L fl tab (wL L).val (2 * t1.val + 1) (2 * k.val) 0 _ hRA ⟨31, by decide⟩ ⟨0, by decide⟩ _ rfl _ hw_v2207_1 _ (k1_off81_form ..) _ _
      have a_v1675_2 : pair1_lt.sl.v1675_2 d L tab k r g1 g2 hR hin = AccMath.accVec (rowF fl tab (wL L).val (2 * t1.val + 1) (2 * k.val)) (offF fl (wL L).val (2 * t1.val + 1) (2 * k.val)) 0 33 := by
        rw [show pair1_lt.sl.v1675_2 d L tab k r g1 g2 hR hin = addf (pair1_lt.sl.v2215_1 d L tab k r g1 g2 hR hin) (pair1_lt.sl.v1674_2 d L tab k r g1 g2 hR hin) from rfl, a_v2215_1]
        exact acc_step d L fl tab (wL L).val (2 * t1.val + 1) (2 * k.val) 0 _ hRA ⟨32, by decide⟩ ⟨0, by decide⟩ _ rfl _ hw_v1667_2 _ (k1_off66_form ..) _ _
      have a_v1711_2 : pair1_lt.sl.v1711_2 d L tab k r g1 g2 hR hin = AccMath.accVec (rowF fl tab (wL L).val (2 * t1.val + 1) (2 * k.val)) (offF fl (wL L).val (2 * t1.val + 1) (2 * k.val)) 0 34 := by
        rw [show pair1_lt.sl.v1711_2 d L tab k r g1 g2 hR hin = addf (pair1_lt.sl.v1675_2 d L tab k r g1 g2 hR hin) (pair1_lt.sl.v1710_2 d L tab k r g1 g2 hR hin) from rfl, a_v1675_2]
        exact acc_step d L fl tab (wL L).val (2 * t1.val + 1) (2 * k.val) 0 _ hRA ⟨33, by decide⟩ ⟨0, by decide⟩ _ rfl _ hw_v1703_2 _ (k1_off67_form ..) _ _
      have a_v1747_2 : pair1_lt.sl.v1747_2 d L tab k r g1 g2 hR hin = AccMath.accVec (rowF fl tab (wL L).val (2 * t1.val + 1) (2 * k.val)) (offF fl (wL L).val (2 * t1.val + 1) (2 * k.val)) 0 35 := by
        rw [show pair1_lt.sl.v1747_2 d L tab k r g1 g2 hR hin = addf (pair1_lt.sl.v1711_2 d L tab k r g1 g2 hR hin) (pair1_lt.sl.v1746_2 d L tab k r g1 g2 hR hin) from rfl, a_v1711_2]
        exact acc_step d L fl tab (wL L).val (2 * t1.val + 1) (2 * k.val) 0 _ hRA ⟨34, by decide⟩ ⟨0, by decide⟩ _ rfl _ hw_v1739_2 _ (k1_off68_form ..) _ _
      have a_v1783_2 : pair1_lt.sl.v1783_2 d L tab k r g1 g2 hR hin = AccMath.accVec (rowF fl tab (wL L).val (2 * t1.val + 1) (2 * k.val)) (offF fl (wL L).val (2 * t1.val + 1) (2 * k.val)) 0 36 := by
        rw [show pair1_lt.sl.v1783_2 d L tab k r g1 g2 hR hin = addf (pair1_lt.sl.v1747_2 d L tab k r g1 g2 hR hin) (pair1_lt.sl.v1782_2 d L tab k r g1 g2 hR hin) from rfl, a_v1747_2]
        exact acc_step d L fl tab (wL L).val (2 * t1.val + 1) (2 * k.val) 0 _ hRA ⟨35, by decide⟩ ⟨0, by decide⟩ _ rfl _ hw_v1775_2 _ (k1_off69_form ..) _ _
      have a_v1819_2 : pair1_lt.sl.v1819_2 d L tab k r g1 g2 hR hin = AccMath.accVec (rowF fl tab (wL L).val (2 * t1.val + 1) (2 * k.val)) (offF fl (wL L).val (2 * t1.val + 1) (2 * k.val)) 0 37 := by
        rw [show pair1_lt.sl.v1819_2 d L tab k r g1 g2 hR hin = addf (pair1_lt.sl.v1783_2 d L tab k r g1 g2 hR hin) (pair1_lt.sl.v1818_2 d L tab k r g1 g2 hR hin) from rfl, a_v1783_2]
        exact acc_step d L fl tab (wL L).val (2 * t1.val + 1) (2 * k.val) 0 _ hRA ⟨36, by decide⟩ ⟨0, by decide⟩ _ rfl _ hw_v1811_2 _ (k1_off70_form ..) _ _
      have a_v1855_2 : pair1_lt.sl.v1855_2 d L tab k r g1 g2 hR hin = AccMath.accVec (rowF fl tab (wL L).val (2 * t1.val + 1) (2 * k.val)) (offF fl (wL L).val (2 * t1.val + 1) (2 * k.val)) 0 38 := by
        rw [show pair1_lt.sl.v1855_2 d L tab k r g1 g2 hR hin = addf (pair1_lt.sl.v1819_2 d L tab k r g1 g2 hR hin) (pair1_lt.sl.v1854_2 d L tab k r g1 g2 hR hin) from rfl, a_v1819_2]
        exact acc_step d L fl tab (wL L).val (2 * t1.val + 1) (2 * k.val) 0 _ hRA ⟨37, by decide⟩ ⟨0, by decide⟩ _ rfl _ hw_v1847_2 _ (k1_off71_form ..) _ _
      have a_v1891_2 : pair1_lt.sl.v1891_2 d L tab k r g1 g2 hR hin = AccMath.accVec (rowF fl tab (wL L).val (2 * t1.val + 1) (2 * k.val)) (offF fl (wL L).val (2 * t1.val + 1) (2 * k.val)) 0 39 := by
        rw [show pair1_lt.sl.v1891_2 d L tab k r g1 g2 hR hin = addf (pair1_lt.sl.v1855_2 d L tab k r g1 g2 hR hin) (pair1_lt.sl.v1890_2 d L tab k r g1 g2 hR hin) from rfl, a_v1855_2]
        exact acc_step d L fl tab (wL L).val (2 * t1.val + 1) (2 * k.val) 0 _ hRA ⟨38, by decide⟩ ⟨0, by decide⟩ _ rfl _ hw_v1883_2 _ (k1_off72_form ..) _ _
      have a_v1927_2 : pair1_lt.sl.v1927_2 d L tab k r g1 g2 hR hin = AccMath.accVec (rowF fl tab (wL L).val (2 * t1.val + 1) (2 * k.val)) (offF fl (wL L).val (2 * t1.val + 1) (2 * k.val)) 0 40 := by
        rw [show pair1_lt.sl.v1927_2 d L tab k r g1 g2 hR hin = addf (pair1_lt.sl.v1891_2 d L tab k r g1 g2 hR hin) (pair1_lt.sl.v1926_2 d L tab k r g1 g2 hR hin) from rfl, a_v1891_2]
        exact acc_step d L fl tab (wL L).val (2 * t1.val + 1) (2 * k.val) 0 _ hRA ⟨39, by decide⟩ ⟨0, by decide⟩ _ rfl _ hw_v1919_2 _ (k1_off73_form ..) _ _
      have a_v1963_2 : pair1_lt.sl.v1963_2 d L tab k r g1 g2 hR hin = AccMath.accVec (rowF fl tab (wL L).val (2 * t1.val + 1) (2 * k.val)) (offF fl (wL L).val (2 * t1.val + 1) (2 * k.val)) 0 41 := by
        rw [show pair1_lt.sl.v1963_2 d L tab k r g1 g2 hR hin = addf (pair1_lt.sl.v1927_2 d L tab k r g1 g2 hR hin) (pair1_lt.sl.v1962_2 d L tab k r g1 g2 hR hin) from rfl, a_v1927_2]
        exact acc_step d L fl tab (wL L).val (2 * t1.val + 1) (2 * k.val) 0 _ hRA ⟨40, by decide⟩ ⟨0, by decide⟩ _ rfl _ hw_v1955_2 _ (k1_off74_form ..) _ _
      have a_v1999_2 : pair1_lt.sl.v1999_2 d L tab k r g1 g2 hR hin = AccMath.accVec (rowF fl tab (wL L).val (2 * t1.val + 1) (2 * k.val)) (offF fl (wL L).val (2 * t1.val + 1) (2 * k.val)) 0 42 := by
        rw [show pair1_lt.sl.v1999_2 d L tab k r g1 g2 hR hin = addf (pair1_lt.sl.v1963_2 d L tab k r g1 g2 hR hin) (pair1_lt.sl.v1998_2 d L tab k r g1 g2 hR hin) from rfl, a_v1963_2]
        exact acc_step d L fl tab (wL L).val (2 * t1.val + 1) (2 * k.val) 0 _ hRA ⟨41, by decide⟩ ⟨0, by decide⟩ _ rfl _ hw_v1991_2 _ (k1_off75_form ..) _ _
      have a_v2035_2 : pair1_lt.sl.v2035_2 d L tab k r g1 g2 hR hin = AccMath.accVec (rowF fl tab (wL L).val (2 * t1.val + 1) (2 * k.val)) (offF fl (wL L).val (2 * t1.val + 1) (2 * k.val)) 0 43 := by
        rw [show pair1_lt.sl.v2035_2 d L tab k r g1 g2 hR hin = addf (pair1_lt.sl.v1999_2 d L tab k r g1 g2 hR hin) (pair1_lt.sl.v2034_2 d L tab k r g1 g2 hR hin) from rfl, a_v1999_2]
        exact acc_step d L fl tab (wL L).val (2 * t1.val + 1) (2 * k.val) 0 _ hRA ⟨42, by decide⟩ ⟨0, by decide⟩ _ rfl _ hw_v2027_2 _ (k1_off76_form ..) _ _
      have a_v2071_2 : pair1_lt.sl.v2071_2 d L tab k r g1 g2 hR hin = AccMath.accVec (rowF fl tab (wL L).val (2 * t1.val + 1) (2 * k.val)) (offF fl (wL L).val (2 * t1.val + 1) (2 * k.val)) 0 44 := by
        rw [show pair1_lt.sl.v2071_2 d L tab k r g1 g2 hR hin = addf (pair1_lt.sl.v2035_2 d L tab k r g1 g2 hR hin) (pair1_lt.sl.v2070_2 d L tab k r g1 g2 hR hin) from rfl, a_v2035_2]
        exact acc_step d L fl tab (wL L).val (2 * t1.val + 1) (2 * k.val) 0 _ hRA ⟨43, by decide⟩ ⟨0, by decide⟩ _ rfl _ hw_v2063_2 _ (k1_off77_form ..) _ _
      have a_v2107_2 : pair1_lt.sl.v2107_2 d L tab k r g1 g2 hR hin = AccMath.accVec (rowF fl tab (wL L).val (2 * t1.val + 1) (2 * k.val)) (offF fl (wL L).val (2 * t1.val + 1) (2 * k.val)) 0 45 := by
        rw [show pair1_lt.sl.v2107_2 d L tab k r g1 g2 hR hin = addf (pair1_lt.sl.v2071_2 d L tab k r g1 g2 hR hin) (pair1_lt.sl.v2106_2 d L tab k r g1 g2 hR hin) from rfl, a_v2071_2]
        exact acc_step d L fl tab (wL L).val (2 * t1.val + 1) (2 * k.val) 0 _ hRA ⟨44, by decide⟩ ⟨0, by decide⟩ _ rfl _ hw_v2099_2 _ (k1_off78_form ..) _ _
      have a_v2143_2 : pair1_lt.sl.v2143_2 d L tab k r g1 g2 hR hin = AccMath.accVec (rowF fl tab (wL L).val (2 * t1.val + 1) (2 * k.val)) (offF fl (wL L).val (2 * t1.val + 1) (2 * k.val)) 0 46 := by
        rw [show pair1_lt.sl.v2143_2 d L tab k r g1 g2 hR hin = addf (pair1_lt.sl.v2107_2 d L tab k r g1 g2 hR hin) (pair1_lt.sl.v2142_2 d L tab k r g1 g2 hR hin) from rfl, a_v2107_2]
        exact acc_step d L fl tab (wL L).val (2 * t1.val + 1) (2 * k.val) 0 _ hRA ⟨45, by decide⟩ ⟨0, by decide⟩ _ rfl _ hw_v2135_2 _ (k1_off79_form ..) _ _
      have a_v2179_2 : pair1_lt.sl.v2179_2 d L tab k r g1 g2 hR hin = AccMath.accVec (rowF fl tab (wL L).val (2 * t1.val + 1) (2 * k.val)) (offF fl (wL L).val (2 * t1.val + 1) (2 * k.val)) 0 47 := by
        rw [show pair1_lt.sl.v2179_2 d L tab k r g1 g2 hR hin = addf (pair1_lt.sl.v2143_2 d L tab k r g1 g2 hR hin) (pair1_lt.sl.v2178_2 d L tab k r g1 g2 hR hin) from rfl, a_v2143_2]
        exact acc_step d L fl tab (wL L).val (2 * t1.val + 1) (2 * k.val) 0 _ hRA ⟨46, by decide⟩ ⟨0, by decide⟩ _ rfl _ hw_v2171_2 _ (k1_off80_form ..) _ _
      have a_v2215_2 : pair1_lt.sl.v2215_2 d L tab k r g1 g2 hR hin = AccMath.accVec (rowF fl tab (wL L).val (2 * t1.val + 1) (2 * k.val)) (offF fl (wL L).val (2 * t1.val + 1) (2 * k.val)) 0 48 := by
        rw [show pair1_lt.sl.v2215_2 d L tab k r g1 g2 hR hin = addf (pair1_lt.sl.v2179_2 d L tab k r g1 g2 hR hin) (pair1_lt.sl.v2214_2 d L tab k r g1 g2 hR hin) from rfl, a_v2179_2]
        exact acc_step d L fl tab (wL L).val (2 * t1.val + 1) (2 * k.val) 0 _ hRA ⟨47, by decide⟩ ⟨0, by decide⟩ _ rfl _ hw_v2207_2 _ (k1_off81_form ..) _ _
      have a_v1464 : pair1_lt.sl.v1464 d L tab k r g1 g2 hR hin = AccMath.accVec (rowF fl tab (wL L).val (2 * t1.val + 1) (2 * k.val)) (offF fl (wL L).val (2 * t1.val + 1) (2 * k.val)) 0 49 := by
        rw [show pair1_lt.sl.v1464 d L tab k r g1 g2 hR hin = addf (pair1_lt.sl.v2215_2 d L tab k r g1 g2 hR hin) (pair1_lt.sl.v1463 d L tab k r g1 g2 hR hin) from rfl, a_v2215_2]
        exact acc_step d L fl tab (wL L).val (2 * t1.val + 1) (2 * k.val) 0 _ hRA ⟨48, by decide⟩ ⟨0, by decide⟩ _ rfl _ hw_v1456 _ (k1_off83_form ..) _ _
      have a_v1498 : pair1_lt.sl.v1498 d L tab k r g1 g2 hR hin = AccMath.accVec (rowF fl tab (wL L).val (2 * t1.val + 1) (2 * k.val)) (offF fl (wL L).val (2 * t1.val + 1) (2 * k.val)) 0 50 := by
        rw [show pair1_lt.sl.v1498 d L tab k r g1 g2 hR hin = addf (pair1_lt.sl.v1464 d L tab k r g1 g2 hR hin) (pair1_lt.sl.v1497 d L tab k r g1 g2 hR hin) from rfl, a_v1464]
        exact acc_step d L fl tab (wL L).val (2 * t1.val + 1) (2 * k.val) 0 _ hRA ⟨49, by decide⟩ ⟨0, by decide⟩ _ rfl _ hw_v1490 _ (k1_off84_form ..) _ _
      have a_v1445_A1 : pair1_lt.sl.v1445 = AccMath.accVec (rowF fl tab (wL L).val (2 * t1.val + 1) (2 * k.val)) (offF fl (wL L).val (2 * t1.val + 1) (2 * k.val)) 1 0 := acc_zero fl tab (wL L).val (2 * t1.val + 1) (2 * k.val) 1
      have a_v1683 : pair1_lt.sl.v1683 d L tab k r g1 g2 hR hin = AccMath.accVec (rowF fl tab (wL L).val (2 * t1.val + 1) (2 * k.val)) (offF fl (wL L).val (2 * t1.val + 1) (2 * k.val)) 1 1 := by
        rw [show pair1_lt.sl.v1683 d L tab k r g1 g2 hR hin = addf (pair1_lt.sl.v1445) (pair1_lt.sl.v1682 d L tab k r g1 g2 hR hin) from rfl, a_v1445_A1]
        exact acc_step d L fl tab (wL L).val (2 * t1.val + 1) (2 * k.val) 0 _ hRA ⟨0, by decide⟩ ⟨1, by decide⟩ _ rfl _ hw_v1667 _ (k1_off66_form ..) _ _
      have a_v1719 : pair1_lt.sl.v1719 d L tab k r g1 g2 hR hin = AccMath.accVec (rowF fl tab (wL L).val (2 * t1.val + 1) (2 * k.val)) (offF fl (wL L).val (2 * t1.val + 1) (2 * k.val)) 1 2 := by
        rw [show pair1_lt.sl.v1719 d L tab k r g1 g2 hR hin = addf (pair1_lt.sl.v1683 d L tab k r g1 g2 hR hin) (pair1_lt.sl.v1718 d L tab k r g1 g2 hR hin) from rfl, a_v1683]
        exact acc_step d L fl tab (wL L).val (2 * t1.val + 1) (2 * k.val) 0 _ hRA ⟨1, by decide⟩ ⟨1, by decide⟩ _ rfl _ hw_v1703 _ (k1_off67_form ..) _ _
      have a_v1755 : pair1_lt.sl.v1755 d L tab k r g1 g2 hR hin = AccMath.accVec (rowF fl tab (wL L).val (2 * t1.val + 1) (2 * k.val)) (offF fl (wL L).val (2 * t1.val + 1) (2 * k.val)) 1 3 := by
        rw [show pair1_lt.sl.v1755 d L tab k r g1 g2 hR hin = addf (pair1_lt.sl.v1719 d L tab k r g1 g2 hR hin) (pair1_lt.sl.v1754 d L tab k r g1 g2 hR hin) from rfl, a_v1719]
        exact acc_step d L fl tab (wL L).val (2 * t1.val + 1) (2 * k.val) 0 _ hRA ⟨2, by decide⟩ ⟨1, by decide⟩ _ rfl _ hw_v1739 _ (k1_off68_form ..) _ _
      have a_v1791 : pair1_lt.sl.v1791 d L tab k r g1 g2 hR hin = AccMath.accVec (rowF fl tab (wL L).val (2 * t1.val + 1) (2 * k.val)) (offF fl (wL L).val (2 * t1.val + 1) (2 * k.val)) 1 4 := by
        rw [show pair1_lt.sl.v1791 d L tab k r g1 g2 hR hin = addf (pair1_lt.sl.v1755 d L tab k r g1 g2 hR hin) (pair1_lt.sl.v1790 d L tab k r g1 g2 hR hin) from rfl, a_v1755]
        exact acc_step d L fl tab (wL L).val (2 * t1.val + 1) (2 * k.val) 0 _ hRA ⟨3, by decide⟩ ⟨1, by decide⟩ _ rfl _ hw_v1775 _ (k1_off69_form ..) _ _
      have a_v1827 : pair1_lt.sl.v1827 d L tab k r g1 g2 hR hin = AccMath.accVec (rowF fl tab (wL L).val (2 * t1.val + 1) (2 * k.val)) (offF fl (wL L).val (2 * t1.val + 1) (2 * k.val)) 1 5 := by
        rw [show pair1_lt.sl.v1827 d L tab k r g1 g2 hR hin = addf (pair1_lt.sl.v1791 d L tab k r g1 g2 hR hin) (pair1_lt.sl.v1826 d L tab k r g1 g2 hR hin) from rfl, a_v1791]
        exact acc_step d L fl tab (wL L).val (2 * t1.val + 1) (2 * k.val) 0 _ hRA ⟨4, by decide⟩ ⟨1, by decide⟩ _ rfl _ hw_v1811 _ (k1_off70_form ..) _ _
      have a_v1863 : pair1_lt.sl.v1863 d L tab k r g1 g2 hR hin = AccMath.accVec (rowF fl tab (wL L).val (2 * t1.val + 1) (2 * k.val)) (offF fl (wL L).val (2 * t1.val + 1) (2 * k.val)) 1 6 := by
        rw [show pair1_lt.sl.v1863 d L tab k r g1 g2 hR hin = addf (pair1_lt.sl.v1827 d L tab k r g1 g2 hR hin) (pair1_lt.sl.v1862 d L tab k r g1 g2 hR hin) from rfl, a_v1827]
        exact acc_step d L fl tab (wL L).val (2 * t1.val + 1) (2 * k.val) 0 _ hRA ⟨5, by decide⟩ ⟨1, by decide⟩ _ rfl _ hw_v1847 _ (k1_off71_form ..) _ _
      have a_v1899 : pair1_lt.sl.v1899 d L tab k r g1 g2 hR hin = AccMath.accVec (rowF fl tab (wL L).val (2 * t1.val + 1) (2 * k.val)) (offF fl (wL L).val (2 * t1.val + 1) (2 * k.val)) 1 7 := by
        rw [show pair1_lt.sl.v1899 d L tab k r g1 g2 hR hin = addf (pair1_lt.sl.v1863 d L tab k r g1 g2 hR hin) (pair1_lt.sl.v1898 d L tab k r g1 g2 hR hin) from rfl, a_v1863]
        exact acc_step d L fl tab (wL L).val (2 * t1.val + 1) (2 * k.val) 0 _ hRA ⟨6, by decide⟩ ⟨1, by decide⟩ _ rfl _ hw_v1883 _ (k1_off72_form ..) _ _
      have a_v1935 : pair1_lt.sl.v1935 d L tab k r g1 g2 hR hin = AccMath.accVec (rowF fl tab (wL L).val (2 * t1.val + 1) (2 * k.val)) (offF fl (wL L).val (2 * t1.val + 1) (2 * k.val)) 1 8 := by
        rw [show pair1_lt.sl.v1935 d L tab k r g1 g2 hR hin = addf (pair1_lt.sl.v1899 d L tab k r g1 g2 hR hin) (pair1_lt.sl.v1934 d L tab k r g1 g2 hR hin) from rfl, a_v1899]
        exact acc_step d L fl tab (wL L).val (2 * t1.val + 1) (2 * k.val) 0 _ hRA ⟨7, by decide⟩ ⟨1, by decide⟩ _ rfl _ hw_v1919 _ (k1_off73_form ..) _ _
      have a_v1971 : pair1_lt.sl.v1971 d L tab k r g1 g2 hR hin = AccMath.accVec (rowF fl tab (wL L).val (2 * t1.val + 1) (2 * k.val)) (offF fl (wL L).val (2 * t1.val + 1) (2 * k.val)) 1 9 := by
        rw [show pair1_lt.sl.v1971 d L tab k r g1 g2 hR hin = addf (pair1_lt.sl.v1935 d L tab k r g1 g2 hR hin) (pair1_lt.sl.v1970 d L tab k r g1 g2 hR hin) from rfl, a_v1935]
        exact acc_step d L fl tab (wL L).val (2 * t1.val + 1) (2 * k.val) 0 _ hRA ⟨8, by decide⟩ ⟨1, by decide⟩ _ rfl _ hw_v1955 _ (k1_off74_form ..) _ _
      have a_v2007 : pair1_lt.sl.v2007 d L tab k r g1 g2 hR hin = AccMath.accVec (rowF fl tab (wL L).val (2 * t1.val + 1) (2 * k.val)) (offF fl (wL L).val (2 * t1.val + 1) (2 * k.val)) 1 10 := by
        rw [show pair1_lt.sl.v2007 d L tab k r g1 g2 hR hin = addf (pair1_lt.sl.v1971 d L tab k r g1 g2 hR hin) (pair1_lt.sl.v2006 d L tab k r g1 g2 hR hin) from rfl, a_v1971]
        exact acc_step d L fl tab (wL L).val (2 * t1.val + 1) (2 * k.val) 0 _ hRA ⟨9, by decide⟩ ⟨1, by decide⟩ _ rfl _ hw_v1991 _ (k1_off75_form ..) _ _
      have a_v2043 : pair1_lt.sl.v2043 d L tab k r g1 g2 hR hin = AccMath.accVec (rowF fl tab (wL L).val (2 * t1.val + 1) (2 * k.val)) (offF fl (wL L).val (2 * t1.val + 1) (2 * k.val)) 1 11 := by
        rw [show pair1_lt.sl.v2043 d L tab k r g1 g2 hR hin = addf (pair1_lt.sl.v2007 d L tab k r g1 g2 hR hin) (pair1_lt.sl.v2042 d L tab k r g1 g2 hR hin) from rfl, a_v2007]
        exact acc_step d L fl tab (wL L).val (2 * t1.val + 1) (2 * k.val) 0 _ hRA ⟨10, by decide⟩ ⟨1, by decide⟩ _ rfl _ hw_v2027 _ (k1_off76_form ..) _ _
      have a_v2079 : pair1_lt.sl.v2079 d L tab k r g1 g2 hR hin = AccMath.accVec (rowF fl tab (wL L).val (2 * t1.val + 1) (2 * k.val)) (offF fl (wL L).val (2 * t1.val + 1) (2 * k.val)) 1 12 := by
        rw [show pair1_lt.sl.v2079 d L tab k r g1 g2 hR hin = addf (pair1_lt.sl.v2043 d L tab k r g1 g2 hR hin) (pair1_lt.sl.v2078 d L tab k r g1 g2 hR hin) from rfl, a_v2043]
        exact acc_step d L fl tab (wL L).val (2 * t1.val + 1) (2 * k.val) 0 _ hRA ⟨11, by decide⟩ ⟨1, by decide⟩ _ rfl _ hw_v2063 _ (k1_off77_form ..) _ _
      have a_v2115 : pair1_lt.sl.v2115 d L tab k r g1 g2 hR hin = AccMath.accVec (rowF fl tab (wL L).val (2 * t1.val + 1) (2 * k.val)) (offF fl (wL L).val (2 * t1.val + 1) (2 * k.val)) 1 13 := by
        rw [show pair1_lt.sl.v2115 d L tab k r g1 g2 hR hin = addf (pair1_lt.sl.v2079 d L tab k r g1 g2 hR hin) (pair1_lt.sl.v2114 d L tab k r g1 g2 hR hin) from rfl, a_v2079]
        exact acc_step d L fl tab (wL L).val (2 * t1.val + 1) (2 * k.val) 0 _ hRA ⟨12, by decide⟩ ⟨1, by decide⟩ _ rfl _ hw_v2099 _ (k1_off78_form ..) _ _
      have a_v2151 : pair1_lt.sl.v2151 d L tab k r g1 g2 hR hin = AccMath.accVec (rowF fl tab (wL L).val (2 * t1.val + 1) (2 * k.val)) (offF fl (wL L).val (2 * t1.val + 1) (2 * k.val)) 1 14 := by
        rw [show pair1_lt.sl.v2151 d L tab k r g1 g2 hR hin = addf (pair1_lt.sl.v2115 d L tab k r g1 g2 hR hin) (pair1_lt.sl.v2150 d L tab k r g1 g2 hR hin) from rfl, a_v2115]
        exact acc_step d L fl tab (wL L).val (2 * t1.val + 1) (2 * k.val) 0 _ hRA ⟨13, by decide⟩ ⟨1, by decide⟩ _ rfl _ hw_v2135 _ (k1_off79_form ..) _ _
      have a_v2187 : pair1_lt.sl.v2187 d L tab k r g1 g2 hR hin = AccMath.accVec (rowF fl tab (wL L).val (2 * t1.val + 1) (2 * k.val)) (offF fl (wL L).val (2 * t1.val + 1) (2 * k.val)) 1 15 := by
        rw [show pair1_lt.sl.v2187 d L tab k r g1 g2 hR hin = addf (pair1_lt.sl.v2151 d L tab k r g1 g2 hR hin) (pair1_lt.sl.v2186 d L tab k r g1 g2 hR hin) from rfl, a_v2151]
        exact acc_step d L fl tab (wL L).val (2 * t1.val + 1) (2 * k.val) 0 _ hRA ⟨14, by decide⟩ ⟨1, by decide⟩ _ rfl _ hw_v2171 _ (k1_off80_form ..) _ _
      have a_v2223 : pair1_lt.sl.v2223 d L tab k r g1 g2 hR hin = AccMath.accVec (rowF fl tab (wL L).val (2 * t1.val + 1) (2 * k.val)) (offF fl (wL L).val (2 * t1.val + 1) (2 * k.val)) 1 16 := by
        rw [show pair1_lt.sl.v2223 d L tab k r g1 g2 hR hin = addf (pair1_lt.sl.v2187 d L tab k r g1 g2 hR hin) (pair1_lt.sl.v2222 d L tab k r g1 g2 hR hin) from rfl, a_v2187]
        exact acc_step d L fl tab (wL L).val (2 * t1.val + 1) (2 * k.val) 0 _ hRA ⟨15, by decide⟩ ⟨1, by decide⟩ _ rfl _ hw_v2207 _ (k1_off81_form ..) _ _
      have a_v1683_1 : pair1_lt.sl.v1683_1 d L tab k r g1 g2 hR hin = AccMath.accVec (rowF fl tab (wL L).val (2 * t1.val + 1) (2 * k.val)) (offF fl (wL L).val (2 * t1.val + 1) (2 * k.val)) 1 17 := by
        rw [show pair1_lt.sl.v1683_1 d L tab k r g1 g2 hR hin = addf (pair1_lt.sl.v2223 d L tab k r g1 g2 hR hin) (pair1_lt.sl.v1682_1 d L tab k r g1 g2 hR hin) from rfl, a_v2223]
        exact acc_step d L fl tab (wL L).val (2 * t1.val + 1) (2 * k.val) 0 _ hRA ⟨16, by decide⟩ ⟨1, by decide⟩ _ rfl _ hw_v1667_1 _ (k1_off66_form ..) _ _
      have a_v1719_1 : pair1_lt.sl.v1719_1 d L tab k r g1 g2 hR hin = AccMath.accVec (rowF fl tab (wL L).val (2 * t1.val + 1) (2 * k.val)) (offF fl (wL L).val (2 * t1.val + 1) (2 * k.val)) 1 18 := by
        rw [show pair1_lt.sl.v1719_1 d L tab k r g1 g2 hR hin = addf (pair1_lt.sl.v1683_1 d L tab k r g1 g2 hR hin) (pair1_lt.sl.v1718_1 d L tab k r g1 g2 hR hin) from rfl, a_v1683_1]
        exact acc_step d L fl tab (wL L).val (2 * t1.val + 1) (2 * k.val) 0 _ hRA ⟨17, by decide⟩ ⟨1, by decide⟩ _ rfl _ hw_v1703_1 _ (k1_off67_form ..) _ _
      have a_v1755_1 : pair1_lt.sl.v1755_1 d L tab k r g1 g2 hR hin = AccMath.accVec (rowF fl tab (wL L).val (2 * t1.val + 1) (2 * k.val)) (offF fl (wL L).val (2 * t1.val + 1) (2 * k.val)) 1 19 := by
        rw [show pair1_lt.sl.v1755_1 d L tab k r g1 g2 hR hin = addf (pair1_lt.sl.v1719_1 d L tab k r g1 g2 hR hin) (pair1_lt.sl.v1754_1 d L tab k r g1 g2 hR hin) from rfl, a_v1719_1]
        exact acc_step d L fl tab (wL L).val (2 * t1.val + 1) (2 * k.val) 0 _ hRA ⟨18, by decide⟩ ⟨1, by decide⟩ _ rfl _ hw_v1739_1 _ (k1_off68_form ..) _ _
      have a_v1791_1 : pair1_lt.sl.v1791_1 d L tab k r g1 g2 hR hin = AccMath.accVec (rowF fl tab (wL L).val (2 * t1.val + 1) (2 * k.val)) (offF fl (wL L).val (2 * t1.val + 1) (2 * k.val)) 1 20 := by
        rw [show pair1_lt.sl.v1791_1 d L tab k r g1 g2 hR hin = addf (pair1_lt.sl.v1755_1 d L tab k r g1 g2 hR hin) (pair1_lt.sl.v1790_1 d L tab k r g1 g2 hR hin) from rfl, a_v1755_1]
        exact acc_step d L fl tab (wL L).val (2 * t1.val + 1) (2 * k.val) 0 _ hRA ⟨19, by decide⟩ ⟨1, by decide⟩ _ rfl _ hw_v1775_1 _ (k1_off69_form ..) _ _
      have a_v1827_1 : pair1_lt.sl.v1827_1 d L tab k r g1 g2 hR hin = AccMath.accVec (rowF fl tab (wL L).val (2 * t1.val + 1) (2 * k.val)) (offF fl (wL L).val (2 * t1.val + 1) (2 * k.val)) 1 21 := by
        rw [show pair1_lt.sl.v1827_1 d L tab k r g1 g2 hR hin = addf (pair1_lt.sl.v1791_1 d L tab k r g1 g2 hR hin) (pair1_lt.sl.v1826_1 d L tab k r g1 g2 hR hin) from rfl, a_v1791_1]
        exact acc_step d L fl tab (wL L).val (2 * t1.val + 1) (2 * k.val) 0 _ hRA ⟨20, by decide⟩ ⟨1, by decide⟩ _ rfl _ hw_v1811_1 _ (k1_off70_form ..) _ _
      have a_v1863_1 : pair1_lt.sl.v1863_1 d L tab k r g1 g2 hR hin = AccMath.accVec (rowF fl tab (wL L).val (2 * t1.val + 1) (2 * k.val)) (offF fl (wL L).val (2 * t1.val + 1) (2 * k.val)) 1 22 := by
        rw [show pair1_lt.sl.v1863_1 d L tab k r g1 g2 hR hin = addf (pair1_lt.sl.v1827_1 d L tab k r g1 g2 hR hin) (pair1_lt.sl.v1862_1 d L tab k r g1 g2 hR hin) from rfl, a_v1827_1]
        exact acc_step d L fl tab (wL L).val (2 * t1.val + 1) (2 * k.val) 0 _ hRA ⟨21, by decide⟩ ⟨1, by decide⟩ _ rfl _ hw_v1847_1 _ (k1_off71_form ..) _ _
      have a_v1899_1 : pair1_lt.sl.v1899_1 d L tab k r g1 g2 hR hin = AccMath.accVec (rowF fl tab (wL L).val (2 * t1.val + 1) (2 * k.val)) (offF fl (wL L).val (2 * t1.val + 1) (2 * k.val)) 1 23 := by
        rw [show pair1_lt.sl.v1899_1 d L tab k r g1 g2 hR hin = addf (pair1_lt.sl.v1863_1 d L tab k r g1 g2 hR hin) (pair1_lt.sl.v1898_1 d L tab k r g1 g2 hR hin) from rfl, a_v1863_1]
        exact acc_step d L fl tab (wL L).val (2 * t1.val + 1) (2 * k.val) 0 _ hRA ⟨22, by decide⟩ ⟨1, by decide⟩ _ rfl _ hw_v1883_1 _ (k1_off72_form ..) _ _
      have a_v1935_1 : pair1_lt.sl.v1935_1 d L tab k r g1 g2 hR hin = AccMath.accVec (rowF fl tab (wL L).val (2 * t1.val + 1) (2 * k.val)) (offF fl (wL L).val (2 * t1.val + 1) (2 * k.val)) 1 24 := by
        rw [show pair1_lt.sl.v1935_1 d L tab k r g1 g2 hR hin = addf (pair1_lt.sl.v1899_1 d L tab k r g1 g2 hR hin) (pair1_lt.sl.v1934_1 d L tab k r g1 g2 hR hin) from rfl, a_v1899_1]
        exact acc_step d L fl tab (wL L).val (2 * t1.val + 1) (2 * k.val) 0 _ hRA ⟨23, by decide⟩ ⟨1, by decide⟩ _ rfl _ hw_v1919_1 _ (k1_off73_form ..) _ _
      have a_v1971_1 : pair1_lt.sl.v1971_1 d L tab k r g1 g2 hR hin = AccMath.accVec (rowF fl tab (wL L).val (2 * t1.val + 1) (2 * k.val)) (offF fl (wL L).val (2 * t1.val + 1) (2 * k.val)) 1 25 := by
        rw [show pair1_lt.sl.v1971_1 d L tab k r g1 g2 hR hin = addf (pair1_lt.sl.v1935_1 d L tab k r g1 g2 hR hin) (pair1_lt.sl.v1970_1 d L tab k r g1 g2 hR hin) from rfl, a_v1935_1]
        exact acc_step d L fl tab (wL L).val (2 * t1.val + 1) (2 * k.val) 0 _ hRA ⟨24, by decide⟩ ⟨1, by decide⟩ _ rfl _ hw_v1955_1 _ (k1_off74_form ..) _ _
      have a_v2007_1 : pair1_lt.sl.v2007_1 d L tab k r g1 g2 hR hin = AccMath.accVec (rowF fl tab (wL L).val (2 * t1.val + 1) (2 * k.val)) (offF fl (wL L).val (2 * t1.val + 1) (2 * k.val)) 1 26 := by
        rw [show pair1_lt.sl.v2007_1 d L tab k r g1 g2 hR hin = addf (pair1_lt.sl.v1971_1 d L tab k r g1 g2 hR hin) (pair1_lt.sl.v2006_1 d L tab k r g1 g2 hR hin) from rfl, a_v1971_1]
        exact acc_step d L fl tab (wL L).val (2 * t1.val + 1) (2 * k.val) 0 _ hRA ⟨25, by decide⟩ ⟨1, by decide⟩ _ rfl _ hw_v1991_1 _ (k1_off75_form ..) _ _
      have a_v2043_1 : pair1_lt.sl.v2043_1 d L tab k r g1 g2 hR hin = AccMath.accVec (rowF fl tab (wL L).val (2 * t1.val + 1) (2 * k.val)) (offF fl (wL L).val (2 * t1.val + 1) (2 * k.val)) 1 27 := by
        rw [show pair1_lt.sl.v2043_1 d L tab k r g1 g2 hR hin = addf (pair1_lt.sl.v2007_1 d L tab k r g1 g2 hR hin) (pair1_lt.sl.v2042_1 d L tab k r g1 g2 hR hin) from rfl, a_v2007_1]
        exact acc_step d L fl tab (wL L).val (2 * t1.val + 1) (2 * k.val) 0 _ hRA ⟨26, by decide⟩ ⟨1, by decide⟩ _ rfl _ hw_v2027_1 _ (k1_off76_form ..) _ _
      have a_v2079_1 : pair1_lt.sl.v2079_1 d L tab k r g1 g2 hR hin = AccMath.accVec (rowF fl tab (wL L).val (2 * t1.val + 1) (2 * k.val)) (offF fl (wL L).val (2 * t1.val + 1) (2 * k.val)) 1 28 := by
        rw [show pair1_lt.sl.v2079_1 d L tab k r g1 g2 hR hin = addf (pair1_lt.sl.v2043_1 d L tab k r g1 g2 hR hin) (pair1_lt.sl.v2078_1 d L tab k r g1 g2 hR hin) from rfl, a_v2043_1]
        exact acc_step d L fl tab (wL L).val (2 * t1.val + 1) (2 * k.val) 0 _ hRA ⟨27, by decide⟩ ⟨1, by decide⟩ _ rfl _ hw_v2063_1 _ (k1_off77_form ..) _ _
      have a_v2115_1 : pair1_lt.sl.v2115_1 d L tab k r g1 g2 hR hin = AccMath.accVec (rowF fl tab (wL L).val (2 * t1.val + 1) (2 * k.val)) (offF fl (wL L).val (2 * t1.val + 1) (2 * k.val)) 1 29 := by
        rw [show pair1_lt.sl.v2115_1 d L tab k r g1 g2 hR hin = addf (pair1_lt.sl.v2079_1 d L tab k r g1 g2 hR hin) (pair1_lt.sl.v2114_1 d L tab k r g1 g2 hR hin) from rfl, a_v2079_1]
        exact acc_step d L fl tab (wL L).val (2 * t1.val + 1) (2 * k.val) 0 _ hRA ⟨28, by decide⟩ ⟨1, by decide⟩ _ rfl _ hw_v2099_1 _ (k1_off78_form ..) _ _
      have a_v2151_1 : pair1_lt.sl.v2151_1 d L tab k r g1 g2 hR hin = AccMath.accVec (rowF fl tab (wL L).val (2 * t1.val + 1) (2 * k.val)) (offF fl (wL L).val (2 * t1.val + 1) (2 * k.val)) 1 30 := by
        rw [show pair1_lt.sl.v2151_1 d L tab k r g1 g2 hR hin = addf (pair1_lt.sl.v2115_1 d L tab k r g1 g2 hR hin) (pair1_lt.sl.v2150_1 d L tab k r g1 g2 hR hin) from rfl, a_v2115_1]
        exact acc_step d L fl tab (wL L).val (2 * t1.val + 1) (2 * k.val) 0 _ hRA ⟨29, by decide⟩ ⟨1, by decide⟩ _ rfl _ hw_v2135_1 _ (k1_off79_form ..) _ _
      have a_v2187_1 : pair1_lt.sl.v2187_1 d L tab k r g1 g2 hR hin = AccMath.accVec (rowF fl tab (wL L).val (2 * t1.val + 1) (2 * k.val)) (offF fl (wL L).val (2 * t1.val + 1) (2 * k.val)) 1 31 := by
        rw [show pair1_lt.sl.v2187_1 d L tab k r g1 g2 hR hin = addf (pair1_lt.sl.v2151_1 d L tab k r g1 g2 hR hin) (pair1_lt.sl.v2186_1 d L tab k r g1 g2 hR hin) from rfl, a_v2151_1]
        exact acc_step d L fl tab (wL L).val (2 * t1.val + 1) (2 * k.val) 0 _ hRA ⟨30, by decide⟩ ⟨1, by decide⟩ _ rfl _ hw_v2171_1 _ (k1_off80_form ..) _ _
      have a_v2223_1 : pair1_lt.sl.v2223_1 d L tab k r g1 g2 hR hin = AccMath.accVec (rowF fl tab (wL L).val (2 * t1.val + 1) (2 * k.val)) (offF fl (wL L).val (2 * t1.val + 1) (2 * k.val)) 1 32 := by
        rw [show pair1_lt.sl.v2223_1 d L tab k r g1 g2 hR hin = addf (pair1_lt.sl.v2187_1 d L tab k r g1 g2 hR hin) (pair1_lt.sl.v2222_1 d L tab k r g1 g2 hR hin) from rfl, a_v2187_1]
        exact acc_step d L fl tab (wL L).val (2 * t1.val + 1) (2 * k.val) 0 _ hRA ⟨31, by decide⟩ ⟨1, by decide⟩ _ rfl _ hw_v2207_1 _ (k1_off81_form ..) _ _
      have a_v1683_2 : pair1_lt.sl.v1683_2 d L tab k r g1 g2 hR hin = AccMath.accVec (rowF fl tab (wL L).val (2 * t1.val + 1) (2 * k.val)) (offF fl (wL L).val (2 * t1.val + 1) (2 * k.val)) 1 33 := by
        rw [show pair1_lt.sl.v1683_2 d L tab k r g1 g2 hR hin = addf (pair1_lt.sl.v2223_1 d L tab k r g1 g2 hR hin) (pair1_lt.sl.v1682_2 d L tab k r g1 g2 hR hin) from rfl, a_v2223_1]
        exact acc_step d L fl tab (wL L).val (2 * t1.val + 1) (2 * k.val) 0 _ hRA ⟨32, by decide⟩ ⟨1, by decide⟩ _ rfl _ hw_v1667_2 _ (k1_off66_form ..) _ _
      have a_v1719_2 : pair1_lt.sl.v1719_2 d L tab k r g1 g2 hR hin = AccMath.accVec (rowF fl tab (wL L).val (2 * t1.val + 1) (2 * k.val)) (offF fl (wL L).val (2 * t1.val + 1) (2 * k.val)) 1 34 := by
        rw [show pair1_lt.sl.v1719_2 d L tab k r g1 g2 hR hin = addf (pair1_lt.sl.v1683_2 d L tab k r g1 g2 hR hin) (pair1_lt.sl.v1718_2 d L tab k r g1 g2 hR hin) from rfl, a_v1683_2]
        exact acc_step d L fl tab (wL L).val (2 * t1.val + 1) (2 * k.val) 0 _ hRA ⟨33, by decide⟩ ⟨1, by decide⟩ _ rfl _ hw_v1703_2 _ (k1_off67_form ..) _ _
      have a_v1755_2 : pair1_lt.sl.v1755_2 d L tab k r g1 g2 hR hin = AccMath.accVec (rowF fl tab (wL L).val (2 * t1.val + 1) (2 * k.val)) (offF fl (wL L).val (2 * t1.val + 1) (2 * k.val)) 1 35 := by
        rw [show pair1_lt.sl.v1755_2 d L tab k r g1 g2 hR hin = addf (pair1_lt.sl.v1719_2 d L tab k r g1 g2 hR hin) (pair1_lt.sl.v1754_2 d L tab k r g1 g2 hR hin) from rfl, a_v1719_2]
        exact acc_step d L fl tab (wL L).val (2 * t1.val + 1) (2 * k.val) 0 _ hRA ⟨34, by decide⟩ ⟨1, by decide⟩ _ rfl _ hw_v1739_2 _ (k1_off68_form ..) _ _
      have a_v1791_2 : pair1_lt.sl.v1791_2 d L tab k r g1 g2 hR hin = AccMath.accVec (rowF fl tab (wL L).val (2 * t1.val + 1) (2 * k.val)) (offF fl (wL L).val (2 * t1.val + 1) (2 * k.val)) 1 36 := by
        rw [show pair1_lt.sl.v1791_2 d L tab k r g1 g2 hR hin = addf (pair1_lt.sl.v1755_2 d L tab k r g1 g2 hR hin) (pair1_lt.sl.v1790_2 d L tab k r g1 g2 hR hin) from rfl, a_v1755_2]
        exact acc_step d L fl tab (wL L).val (2 * t1.val + 1) (2 * k.val) 0 _ hRA ⟨35, by decide⟩ ⟨1, by decide⟩ _ rfl _ hw_v1775_2 _ (k1_off69_form ..) _ _
      have a_v1827_2 : pair1_lt.sl.v1827_2 d L tab k r g1 g2 hR hin = AccMath.accVec (rowF fl tab (wL L).val (2 * t1.val + 1) (2 * k.val)) (offF fl (wL L).val (2 * t1.val + 1) (2 * k.val)) 1 37 := by
        rw [show pair1_lt.sl.v1827_2 d L tab k r g1 g2 hR hin = addf (pair1_lt.sl.v1791_2 d L tab k r g1 g2 hR hin) (pair1_lt.sl.v1826_2 d L tab k r g1 g2 hR hin) from rfl, a_v1791_2]
        exact acc_step d L fl tab (wL L).val (2 * t1.val + 1) (2 * k.val) 0 _ hRA ⟨36, by decide⟩ ⟨1, by decide⟩ _ rfl _ hw_v1811_2 _ (k1_off70_form ..) _ _
      have a_v1863_2 : pair1_lt.sl.v1863_2 d L tab k r g1 g2 hR hin = AccMath.accVec (rowF fl tab (wL L).val (2 * t1.val + 1) (2 * k.val)) (offF fl (wL L).val (2 * t1.val + 1) (2 * k.val)) 1 38 := by
        rw [show pair1_lt.sl.v1863_2 d L tab k r g1 g2 hR hin = addf (pair1_lt.sl.v1827_2 d L tab k r g1 g2 hR hin) (pair1_lt.sl.v1862_2 d L tab k r g1 g2 hR hin) from rfl, a_v1827_2]
        exact acc_step d L fl tab (wL L).val (2 * t1.val + 1) (2 * k.val) 0 _ hRA ⟨37, by decide⟩ ⟨1, by decide⟩ _ rfl _ hw_v1847_2 _ (k1_off71_form ..) _ _
      have a_v1899_2 : pair1_lt.sl.v1899_2 d L tab k r g1 g2 hR hin = AccMath.accVec (rowF fl tab (wL L).val (2 * t1.val + 1) (2 * k.val)) (offF fl (wL L).val (2 * t1.val + 1) (2 * k.val)) 1 39 := by
        rw [show pair1_lt.sl.v1899_2 d L tab k r g1 g2 hR hin = addf (pair1_lt.sl.v1863_2 d L tab k r g1 g2 hR hin) (pair1_lt.sl.v1898_2 d L tab k r g1 g2 hR hin) from rfl, a_v1863_2]
        exact acc_step d L fl tab (wL L).val (2 * t1.val + 1) (2 * k.val) 0 _ hRA ⟨38, by decide⟩ ⟨1, by decide⟩ _ rfl _ hw_v1883_2 _ (k1_off72_form ..) _ _
      have a_v1935_2 : pair1_lt.sl.v1935_2 d L tab k r g1 g2 hR hin = AccMath.accVec (rowF fl tab (wL L).val (2 * t1.val + 1) (2 * k.val)) (offF fl (wL L).val (2 * t1.val + 1) (2 * k.val)) 1 40 := by
        rw [show pair1_lt.sl.v1935_2 d L tab k r g1 g2 hR hin = addf (pair1_lt.sl.v1899_2 d L tab k r g1 g2 hR hin) (pair1_lt.sl.v1934_2 d L tab k r g1 g2 hR hin) from rfl, a_v1899_2]
        exact acc_step d L fl tab (wL L).val (2 * t1.val + 1) (2 * k.val) 0 _ hRA ⟨39, by decide⟩ ⟨1, by decide⟩ _ rfl _ hw_v1919_2 _ (k1_off73_form ..) _ _
      have a_v1971_2 : pair1_lt.sl.v1971_2 d L tab k r g1 g2 hR hin = AccMath.accVec (rowF fl tab (wL L).val (2 * t1.val + 1) (2 * k.val)) (offF fl (wL L).val (2 * t1.val + 1) (2 * k.val)) 1 41 := by
        rw [show pair1_lt.sl.v1971_2 d L tab k r g1 g2 hR hin = addf (pair1_lt.sl.v1935_2 d L tab k r g1 g2 hR hin) (pair1_lt.sl.v1970_2 d L tab k r g1 g2 hR hin) from rfl, a_v1935_2]
        exact acc_step d L fl tab (wL L).val (2 * t1.val + 1) (2 * k.val) 0 _ hRA ⟨40, by decide⟩ ⟨1, by decide⟩ _ rfl _ hw_v1955_2 _ (k1_off74_form ..) _ _
      have a_v2007_2 : pair1_lt.sl.v2007_2 d L tab k r g1 g2 hR hin = AccMath.accVec (rowF fl tab (wL L).val (2 * t1.val + 1) (2 * k.val)) (offF fl (wL L).val (2 * t1.val + 1) (2 * k.val)) 1 42 := by
        rw [show pair1_lt.sl.v2007_2 d L tab k r g1 g2 hR hin = addf (pair1_lt.sl.v1971_2 d L tab k r g1 g2 hR hin) (pair1_lt.sl.v2006_2 d L tab k r g1 g2 hR hin) from rfl, a_v1971_2]
        exact acc_step d L fl tab (wL L).val (2 * t1.val + 1) (2 * k.val) 0 _ hRA ⟨41, by decide⟩ ⟨1, by decide⟩ _ rfl _ hw_v1991_2 _ (k1_off75_form ..) _ _
      have a_v2043_2 : pair1_lt.sl.v2043_2 d L tab k r g1 g2 hR hin = AccMath.accVec (rowF fl tab (wL L).val (2 * t1.val + 1) (2 * k.val)) (offF fl (wL L).val (2 * t1.val + 1) (2 * k.val)) 1 43 := by
        rw [show pair1_lt.sl.v2043_2 d L tab k r g1 g2 hR hin = addf (pair1_lt.sl.v2007_2 d L tab k r g1 g2 hR hin) (pair1_lt.sl.v2042_2 d L tab k r g1 g2 hR hin) from rfl, a_v2007_2]
        exact acc_step d L fl tab (wL L).val (2 * t1.val + 1) (2 * k.val) 0 _ hRA ⟨42, by decide⟩ ⟨1, by decide⟩ _ rfl _ hw_v2027_2 _ (k1_off76_form ..) _ _
      have a_v2079_2 : pair1_lt.sl.v2079_2 d L tab k r g1 g2 hR hin = AccMath.accVec (rowF fl tab (wL L).val (2 * t1.val + 1) (2 * k.val)) (offF fl (wL L).val (2 * t1.val + 1) (2 * k.val)) 1 44 := by
        rw [show pair1_lt.sl.v2079_2 d L tab k r g1 g2 hR hin = addf (pair1_lt.sl.v2043_2 d L tab k r g1 g2 hR hin) (pair1_lt.sl.v2078_2 d L tab k r g1 g2 hR hin) from rfl, a_v2043_2]
        exact acc_step d L fl tab (wL L).val (2 * t1.val + 1) (2 * k.val) 0 _ hRA ⟨43, by decide⟩ ⟨1, by decide⟩ _ rfl _ hw_v2063_2 _ (k1_off77_form ..) _ _
      have a_v2115_2 : pair1_lt.sl.v2115_2 d L tab k r g1 g2 hR hin = AccMath.accVec (rowF fl tab (wL L).val (2 * t1.val + 1) (2 * k.val)) (offF fl (wL L).val (2 * t1.val + 1) (2 * k.val)) 1 45 := by
        rw [show pair1_lt.sl.v2115_2 d L tab k r g1 g2 hR hin = addf (pair1_lt.sl.v2079_2 d L tab k r g1 g2 hR hin) (pair1_lt.sl.v2114_2 d L tab k r g1 g2 hR hin) from rfl, a_v2079_2]
        exact acc_step d L fl tab (wL L).val (2 * t1.val + 1) (2 * k.val) 0 _ hRA ⟨44, by decide⟩ ⟨1, by decide⟩ _ rfl _ hw_v2099_2 _ (k1_off78_form ..) _ _
      have a_v2151_2 : pair1_lt.sl.v2151_2 d L tab k r g1 g2 hR hin = AccMath.accVec (rowF fl tab (wL L).val (2 * t1.val + 1) (2 * k.val)) (offF fl (wL L).val (2 * t1.val + 1) (2 * k.val)) 1 46 := by
        rw [show pair1_lt.sl.v2151_2 d L tab k r g1 g2 hR hin = addf (pair1_lt.sl.v2115_2 d L tab k r g1 g2 hR hin) (pair1_lt.sl.v2150_2 d L tab k r g1 g2 hR hin) from rfl, a_v2115_2]
        exact acc_step d L fl tab (wL L).val (2 * t1.val + 1) (2 * k.val) 0 _ hRA ⟨45, by decide⟩ ⟨1, by decide⟩ _ rfl _ hw_v2135_2 _ (k1_off79_form ..) _ _
      have a_v2187_2 : pair1_lt.sl.v2187_2 d L tab k r g1 g2 hR hin = AccMath.accVec (rowF fl tab (wL L).val (2 * t1.val + 1) (2 * k.val)) (offF fl (wL L).val (2 * t1.val + 1) (2 * k.val)) 1 47 := by
        rw [show pair1_lt.sl.v2187_2 d L tab k r g1 g2 hR hin = addf (pair1_lt.sl.v2151_2 d L tab k r g1 g2 hR hin) (pair1_lt.sl.v2186_2 d L tab k r g1 g2 hR hin) from rfl, a_v2151_2]
        exact acc_step d L fl tab (wL L).val (2 * t1.val + 1) (2 * k.val) 0 _ hRA ⟨46, by decide⟩ ⟨1, by decide⟩ _ rfl _ hw_v2171_2 _ (k1_off80_form ..) _ _
      have a_v2223_2 : pair1_lt.sl.v2223_2 d L tab k r g1 g2 hR hin = AccMath.accVec (rowF fl tab (wL L).val (2 * t1.val + 1) (2 * k.val)) (offF fl (wL L).val (2 * t1.val + 1) (2 * k.val)) 1 48 := by
        rw [show pair1_lt.sl.v2223_2 d L tab k r g1 g2 hR hin = addf (pair1_lt.sl.v2187_2 d L tab k r g1 g2 hR hin) (pair1_lt.sl.v2222_2 d L tab k r g1 g2 hR hin) from rfl, a_v2187_2]
        exact acc_step d L fl tab (wL L).val (2 * t1.val + 1) (2 * k.val) 0 _ hRA ⟨47, by decide⟩ ⟨1, by decide⟩ _ rfl _ hw_v2207_2 _ (k1_off81_form ..) _ _
      have a_v1472 : pair1_lt.sl.v1472 d L tab k r g1 g2 hR hin = AccMath.accVec (rowF fl tab (wL L).val (2 * t1.val + 1) (2 * k.val)) (offF fl (wL L).val (2 * t1.val + 1) (2 * k.val)) 1 49 := by
        rw [show pair1_lt.sl.v1472 d L tab k r g1 g2 hR hin = addf (pair1_lt.sl.v2223_2 d L tab k r g1 g2 hR hin) (pair1_lt.sl.v1471 d L tab k r g1 g2 hR hin) from rfl, a_v2223_2]
        exact acc_step d L fl tab (wL L).val (2 * t1.val + 1) (2 * k.val) 0 _ hRA ⟨48, by decide⟩ ⟨1, by decide⟩ _ rfl _ hw_v1456 _ (k1_off83_form ..) _ _
      have a_v1506 : pair1_lt.sl.v1506 d L tab k r g1 g2 hR hin = AccMath.accVec (rowF fl tab (wL L).val (2 * t1.val + 1) (2 * k.val)) (offF fl (wL L).val (2 * t1.val + 1) (2 * k.val)) 1 50 := by
        rw [show pair1_lt.sl.v1506 d L tab k r g1 g2 hR hin = addf (pair1_lt.sl.v1472 d L tab k r g1 g2 hR hin) (pair1_lt.sl.v1505 d L tab k r g1 g2 hR hin) from rfl, a_v1472]
        exact acc_step d L fl tab (wL L).val (2 * t1.val + 1) (2 * k.val) 0 _ hRA ⟨49, by decide⟩ ⟨1, by decide⟩ _ rfl _ hw_v1490 _ (k1_off84_form ..) _ _
      have a_v1445_A2 : pair1_lt.sl.v1445 = AccMath.accVec (rowF fl tab (wL L).val (2 * t1.val + 1) (2 * k.val)) (offF fl (wL L).val (2 * t1.val + 1) (2 * k.val)) 2 0 := acc_zero fl tab (wL L).val (2 * t1.val + 1) (2 * k.val) 2
      have a_v1691 : pair1_lt.sl.v1691 d L tab k r g1 g2 hR hin = AccMath.accVec (rowF fl tab (wL L).val (2 * t1.val + 1) (2 * k.val)) (offF fl (wL L).val (2 * t1.val + 1) (2 * k.val)) 2 1 := by
        rw [show pair1_lt.sl.v1691 d L tab k r g1 g2 hR hin = addf (pair1_lt.sl.v1445) (pair1_lt.sl.v1690 d L tab k r g1 g2 hR hin) from rfl, a_v1445_A2]
        exact acc_step d L fl tab (wL L).val (2 * t1.val + 1) (2 * k.val) 0 _ hRA ⟨0, by decide⟩ ⟨2, by decide⟩ _ rfl _ hw_v1667 _ (k1_off66_form ..) _ _
      have a_v1727 : pair1_lt.sl.v1727 d L tab k r g1 g2 hR hin = AccMath.accVec (rowF fl tab (wL L).val (2 * t1.val + 1) (2 * k.val)) (offF fl (wL L).val (2 * t1.val + 1) (2 * k.val)) 2 2 := by
        rw [show pair1_lt.sl.v1727 d L tab k r g1 g2 hR hin = addf (pair1_lt.sl.v1691 d L tab k r g1 g2 hR hin) (pair1_lt.sl.v1726 d L tab k r g1 g2 hR hin) from rfl, a_v1691]
        exact acc_step d L fl tab (wL L).val (2 * t1.val + 1) (2 * k.val) 0 _ hRA ⟨1, by decide⟩ ⟨2, by decide⟩ _ rfl _ hw_v1703 _ (k1_off67_form ..) _ _
      have a_v1763 : pair1_lt.sl.v1763 d L tab k r g1 g2 hR hin = AccMath.accVec (rowF fl tab (wL L).val (2 * t1.val + 1) (2 * k.val)) (offF fl (wL L).val (2 * t1.val + 1) (2 * k.val)) 2 3 := by
        rw [show pair1_lt.sl.v1763 d L tab k r g1 g2 hR hin = addf (pair1_lt.sl.v1727 d L tab k r g1 g2 hR hin) (pair1_lt.sl.v1762 d L tab k r g1 g2 hR hin) from rfl, a_v1727]
        exact acc_step d L fl tab (wL L).val (2 * t1.val + 1) (2 * k.val) 0 _ hRA ⟨2, by decide⟩ ⟨2, by decide⟩ _ rfl _ hw_v1739 _ (k1_off68_form ..) _ _
      have a_v1799 : pair1_lt.sl.v1799 d L tab k r g1 g2 hR hin = AccMath.accVec (rowF fl tab (wL L).val (2 * t1.val + 1) (2 * k.val)) (offF fl (wL L).val (2 * t1.val + 1) (2 * k.val)) 2 4 := by
        rw [show pair1_lt.sl.v1799 d L tab k r g1 g2 hR hin = addf (pair1_lt.sl.v1763 d L tab k r g1 g2 hR hin) (pair1_lt.sl.v1798 d L tab k r g1 g2 hR hin) from rfl, a_v1763]
        exact acc_step d L fl tab (wL L).val (2 * t1.val + 1) (2 * k.val) 0 _ hRA ⟨3, by decide⟩ ⟨2, by decide⟩ _ rfl _ hw_v1775 _ (k1_off69_form ..) _ _
      have a_v1835 : pair1_lt.sl.v1835 d L tab k r g1 g2 hR hin = AccMath.accVec (rowF fl tab (wL L).val (2 * t1.val + 1) (2 * k.val)) (offF fl (wL L).val (2 * t1.val + 1) (2 * k.val)) 2 5 := by
        rw [show pair1_lt.sl.v1835 d L tab k r g1 g2 hR hin = addf (pair1_lt.sl.v1799 d L tab k r g1 g2 hR hin) (pair1_lt.sl.v1834 d L tab k r g1 g2 hR hin) from rfl, a_v1799]
        exact acc_step d L fl tab (wL L).val (2 * t1.val + 1) (2 * k.val) 0 _ hRA ⟨4, by decide⟩ ⟨2, by decide⟩ _ rfl _ hw_v1811 _ (k1_off70_form ..) _ _
      have a_v1871 : pair1_lt.sl.v1871 d L tab k r g1 g2 hR hin = AccMath.accVec (rowF fl tab (wL L).val (2 * t1.val + 1) (2 * k.val)) (offF fl (wL L).val (2 * t1.val + 1) (2 * k.val)) 2 6 := by
        rw [show pair1_lt.sl.v1871 d L tab k r g1 g2 hR hin = addf (pair1_lt.sl.v1835 d L tab k r g1 g2 hR hin) (pair1_lt.sl.v1870 d L tab k r g1 g2 hR hin) from rfl, a_v1835]
        exact acc_step d L fl tab (wL L).val (2 * t1.val + 1) (2 * k.val) 0 _ hRA ⟨5, by decide⟩ ⟨2, by decide⟩ _ rfl _ hw_v1847 _ (k1_off71_form ..) _ _
      have a_v1907 : pair1_lt.sl.v1907 d L tab k r g1 g2 hR hin = AccMath.accVec (rowF fl tab (wL L).val (2 * t1.val + 1) (2 * k.val)) (offF fl (wL L).val (2 * t1.val + 1) (2 * k.val)) 2 7 := by
        rw [show pair1_lt.sl.v1907 d L tab k r g1 g2 hR hin = addf (pair1_lt.sl.v1871 d L tab k r g1 g2 hR hin) (pair1_lt.sl.v1906 d L tab k r g1 g2 hR hin) from rfl, a_v1871]
        exact acc_step d L fl tab (wL L).val (2 * t1.val + 1) (2 * k.val) 0 _ hRA ⟨6, by decide⟩ ⟨2, by decide⟩ _ rfl _ hw_v1883 _ (k1_off72_form ..) _ _
      have a_v1943 : pair1_lt.sl.v1943 d L tab k r g1 g2 hR hin = AccMath.accVec (rowF fl tab (wL L).val (2 * t1.val + 1) (2 * k.val)) (offF fl (wL L).val (2 * t1.val + 1) (2 * k.val)) 2 8 := by
        rw [show pair1_lt.sl.v1943 d L tab k r g1 g2 hR hin = addf (pair1_lt.sl.v1907 d L tab k r g1 g2 hR hin) (pair1_lt.sl.v1942 d L tab k r g1 g2 hR hin) from rfl, a_v1907]
        exact acc_step d L fl tab (wL L).val (2 * t1.val + 1) (2 * k.val) 0 _ hRA ⟨7, by decide⟩ ⟨2, by decide⟩ _ rfl _ hw_v1919 _ (k1_off73_form ..) _ _
      have a_v1979 : pair1_lt.sl.v1979 d L tab k r g1 g2 hR hin = AccMath.accVec (rowF fl tab (wL L).val (2 * t1.val + 1) (2 * k.val)) (offF fl (wL L).val (2 * t1.val + 1) (2 * k.val)) 2 9 := by
        rw [show pair1_lt.sl.v1979 d L tab k r g1 g2 hR hin = addf (pair1_lt.sl.v1943 d L tab k r g1 g2 hR hin) (pair1_lt.sl.v1978 d L tab k r g1 g2 hR hin) from rfl, a_v1943]
        exact acc_step d L fl tab (wL L).val (2 * t1.val + 1) (2 * k.val) 0 _ hRA ⟨8, by decide⟩ ⟨2, by decide⟩ _ rfl _ hw_v1955 _ (k1_off74_form ..) _ _
      have a_v2015 : pair1_lt.sl.v2015 d L tab k r g1 g2 hR hin = AccMath.accVec (rowF fl tab (wL L).val (2 * t1.val + 1) (2 * k.val)) (offF fl (wL L).val (2 * t1.val + 1) (2 * k.val)) 2 10 := by
        rw [show pair1_lt.sl.v2015 d L tab k r g1 g2 hR hin = addf (pair1_lt.sl.v1979 d L tab k r g1 g2 hR hin) (pair1_lt.sl.v2014 d L tab k r g1 g2 hR hin) from rfl, a_v1979]
        exact acc_step d L fl tab (wL L).val (2 * t1.val + 1) (2 * k.val) 0 _ hRA ⟨9, by decide⟩ ⟨2, by decide⟩ _ rfl _ hw_v1991 _ (k1_off75_form ..) _ _
      have a_v2051 : pair1_lt.sl.v2051 d L tab k r g1 g2 hR hin = AccMath.accVec (rowF fl tab (wL L).val (2 * t1.val + 1) (2 * k.val)) (offF fl (wL L).val (2 * t1.val + 1) (2 * k.val)) 2 11 := by
        rw [show pair1_lt.sl.v2051 d L tab k r g1 g2 hR hin = addf (pair1_lt.sl.v2015 d L tab k r g1 g2 hR hin) (pair1_lt.sl.v2050 d L tab k r g1 g2 hR hin) from rfl, a_v2015]
        exact acc_step d L fl tab (wL L).val (2 * t1.val + 1) (2 * k.val) 0 _ hRA ⟨10, by decide⟩ ⟨2, by decide⟩ _ rfl _ hw_v2027 _ (k1_off76_form ..) _ _
      have a_v2087 : pair1_lt.sl.v2087 d L tab k r g1 g2 hR hin = AccMath.accVec (rowF fl tab (wL L).val (2 * t1.val + 1) (2 * k.val)) (offF fl (wL L).val (2 * t1.val + 1) (2 * k.val)) 2 12 := by
        rw [show pair1_lt.sl.v2087 d L tab k r g1 g2 hR hin = addf (pair1_lt.sl.v2051 d L tab k r g1 g2 hR hin) (pair1_lt.sl.v2086 d L tab k r g1 g2 hR hin) from rfl, a_v2051]
        exact acc_step d L fl tab (wL L).val (2 * t1.val + 1) (2 * k.val) 0 _ hRA ⟨11, by decide⟩ ⟨2, by decide⟩ _ rfl _ hw_v2063 _ (k1_off77_form ..) _ _
      have a_v2123 : pair1_lt.sl.v2123 d L tab k r g1 g2 hR hin = AccMath.accVec (rowF fl tab (wL L).val (2 * t1.val + 1) (2 * k.val)) (offF fl (wL L).val (2 * t1.val + 1) (2 * k.val)) 2 13 := by
        rw [show pair1_lt.sl.v2123 d L tab k r g1 g2 hR hin = addf (pair1_lt.sl.v2087 d L tab k r g1 g2 hR hin) (pair1_lt.sl.v2122 d L tab k r g1 g2 hR hin) from rfl, a_v2087]
        exact acc_step d L fl tab (wL L).val (2 * t1.val + 1) (2 * k.val) 0 _ hRA ⟨12, by decide⟩ ⟨2, by decide⟩ _ rfl _ hw_v2099 _ (k1_off78_form ..) _ _
      have a_v2159 : pair1_lt.sl.v2159 d L tab k r g1 g2 hR hin = AccMath.accVec (rowF fl tab (wL L).val (2 * t1.val + 1) (2 * k.val)) (offF fl (wL L).val (2 * t1.val + 1) (2 * k.val)) 2 14 := by
        rw [show pair1_lt.sl.v2159 d L tab k r g1 g2 hR hin = addf (pair1_lt.sl.v2123 d L tab k r g1 g2 hR hin) (pair1_lt.sl.v2158 d L tab k r g1 g2 hR hin) from rfl, a_v2123]
        exact acc_step d L fl tab (wL L).val (2 * t1.val + 1) (2 * k.val) 0 _ hRA ⟨13, by decide⟩ ⟨2, by decide⟩ _ rfl _ hw_v2135 _ (k1_off79_form ..) _ _
      have a_v2195 : pair1_lt.sl.v2195 d L tab k r g1 g2 hR hin = AccMath.accVec (rowF fl tab (wL L).val (2 * t1.val + 1) (2 * k.val)) (offF fl (wL L).val (2 * t1.val + 1) (2 * k.val)) 2 15 := by
        rw [show pair1_lt.sl.v2195 d L tab k r g1 g2 hR hin = addf (pair1_lt.sl.v2159 d L tab k r g1 g2 hR hin) (pair1_lt.sl.v2194 d L tab k r g1 g2 hR hin) from rfl, a_v2159]
        exact acc_step d L fl tab (wL L).val (2 * t1.val + 1) (2 * k.val) 0 _ hRA ⟨14, by decide⟩ ⟨2, by decide⟩ _ rfl _ hw_v2171 _ (k1_off80_form ..) _ _
      have a_v2231 : pair1_lt.sl.v2231 d L tab k r g1 g2 hR hin = AccMath.accVec (rowF fl tab (wL L).val (2 * t1.val + 1) (2 * k.val)) (offF fl (wL L).val (2 * t1.val + 1) (2 * k.val)) 2 16 := by
        rw [show pair1_lt.sl.v2231 d L tab k r g1 g2 hR hin = addf (pair1_lt.sl.v2195 d L tab k r g1 g2 hR hin) (pair1_lt.sl.v2230 d L tab k r g1 g2 hR hin) from rfl, a_v2195]
        exact acc_step d L fl tab (wL L).val (2 * t1.val + 1) (2 * k.val) 0 _ hRA ⟨15, by decide⟩ ⟨2, by decide⟩ _ rfl _ hw_v2207 _ (k1_off81_form ..) _ _
      have a_v1691_1 : pair1_lt.sl.v1691_1 d L tab k r g1 g2 hR hin = AccMath.accVec (rowF fl tab (wL L).val (2 * t1.val + 1) (2 * k.val)) (offF fl (wL L).val (2 * t1.val + 1) (2 * k.val)) 2 17 := by
        rw [show pair1_lt.sl.v1691_1 d L tab k r g1 g2 hR hin = addf (pair1_lt.sl.v2231 d L tab k r g1 g2 hR hin) (pair1_lt.sl.v1690_1 d L tab k r g1 g2 hR hin) from rfl, a_v2231]
        exact acc_step d L fl tab (wL L).val (2 * t1.val + 1) (2 * k.val) 0 _ hRA ⟨16, by decide⟩ ⟨2, by decide⟩ _ rfl _ hw_v1667_1 _ (k1_off66_form ..) _ _
      have a_v1727_1 : pair1_lt.sl.v1727_1 d L tab k r g1 g2 hR hin = AccMath.accVec (rowF fl tab (wL L).val (2 * t1.val + 1) (2 * k.val)) (offF fl (wL L).val (2 * t1.val + 1) (2 * k.val)) 2 18 := by
        rw [show pair1_lt.sl.v1727_1 d L tab k r g1 g2 hR hin = addf (pair1_lt.sl.v1691_1 d L tab k r g1 g2 hR hin) (pair1_lt.sl.v1726_1 d L tab k r g1 g2 hR hin) from rfl, a_v1691_1]
        exact acc_step d L fl tab (wL L).val (2 * t1.val + 1) (2 * k.val) 0 _ hRA ⟨17, by decide⟩ ⟨2, by decide⟩ _ rfl _ hw_v1703_1 _ (k1_off67_form ..) _ _
      have a_v1763_1 : pair1_lt.sl.v1763_1 d L tab k r g1 g2 hR hin = AccMath.accVec (rowF fl tab (wL L).val (2 * t1.val + 1) (2 * k.val)) (offF fl (wL L).val (2 * t1.val + 1) (2 * k.val)) 2 19 := by
        rw [show pair1_lt.sl.v1763_1 d L tab k r g1 g2 hR hin = addf (pair1_lt.sl.v1727_1 d L tab k r g1 g2 hR hin) (pair1_lt.sl.v1762_1 d L tab k r g1 g2 hR hin) from rfl, a_v1727_1]
        exact acc_step d L fl tab (wL L).val (2 * t1.val + 1) (2 * k.val) 0 _ hRA ⟨18, by decide⟩ ⟨2, by decide⟩ _ rfl _ hw_v1739_1 _ (k1_off68_form ..) _ _
      have a_v1799_1 : pair1_lt.sl.v1799_1 d L tab k r g1 g2 hR hin = AccMath.accVec (rowF fl tab (wL L).val (2 * t1.val + 1) (2 * k.val)) (offF fl (wL L).val (2 * t1.val + 1) (2 * k.val)) 2 20 := by
        rw [show pair1_lt.sl.v1799_1 d L tab k r g1 g2 hR hin = addf (pair1_lt.sl.v1763_1 d L tab k r g1 g2 hR hin) (pair1_lt.sl.v1798_1 d L tab k r g1 g2 hR hin) from rfl, a_v1763_1]
        exact acc_step d L fl tab (wL L).val (2 * t1.val + 1) (2 * k.val) 0 _ hRA ⟨19, by decide⟩ ⟨2, by decide⟩ _ rfl _ hw_v1775_1 _ (k1_off69_form ..) _ _
      have a_v1835_1 : pair1_lt.sl.v1835_1 d L tab k r g1 g2 hR hin = AccMath.accVec (rowF fl tab (wL L).val (2 * t1.val + 1) (2 * k.val)) (offF fl (wL L).val (2 * t1.val + 1) (2 * k.val)) 2 21 := by
        rw [show pair1_lt.sl.v1835_1 d L tab k r g1 g2 hR hin = addf (pair1_lt.sl.v1799_1 d L tab k r g1 g2 hR hin) (pair1_lt.sl.v1834_1 d L tab k r g1 g2 hR hin) from rfl, a_v1799_1]
        exact acc_step d L fl tab (wL L).val (2 * t1.val + 1) (2 * k.val) 0 _ hRA ⟨20, by decide⟩ ⟨2, by decide⟩ _ rfl _ hw_v1811_1 _ (k1_off70_form ..) _ _
      have a_v1871_1 : pair1_lt.sl.v1871_1 d L tab k r g1 g2 hR hin = AccMath.accVec (rowF fl tab (wL L).val (2 * t1.val + 1) (2 * k.val)) (offF fl (wL L).val (2 * t1.val + 1) (2 * k.val)) 2 22 := by
        rw [show pair1_lt.sl.v1871_1 d L tab k r g1 g2 hR hin = addf (pair1_lt.sl.v1835_1 d L tab k r g1 g2 hR hin) (pair1_lt.sl.v1870_1 d L tab k r g1 g2 hR hin) from rfl, a_v1835_1]
        exact acc_step d L fl tab (wL L).val (2 * t1.val + 1) (2 * k.val) 0 _ hRA ⟨21, by decide⟩ ⟨2, by decide⟩ _ rfl _ hw_v1847_1 _ (k1_off71_form ..) _ _
      have a_v1907_1 : pair1_lt.sl.v1907_1 d L tab k r g1 g2 hR hin = AccMath.accVec (rowF fl tab (wL L).val (2 * t1.val + 1) (2 * k.val)) (offF fl (wL L).val (2 * t1.val + 1) (2 * k.val)) 2 23 := by
        rw [show pair1_lt.sl.v1907_1 d L tab k r g1 g2 hR hin = addf (pair1_lt.sl.v1871_1 d L tab k r g1 g2 hR hin) (pair1_lt.sl.v1906_1 d L tab k r g1 g2 hR hin) from rfl, a_v1871_1]
        exact acc_step d L fl tab (wL L).val (2 * t1.val + 1) (2 * k.val) 0 _ hRA ⟨22, by decide⟩ ⟨2, by decide⟩ _ rfl _ hw_v1883_1 _ (k1_off72_form ..) _ _
      have a_v1943_1 : pair1_lt.sl.v1943_1 d L tab k r g1 g2 hR hin = AccMath.accVec (rowF fl tab (wL L).val (2 * t1.val + 1) (2 * k.val)) (offF fl (wL L).val (2 * t1.val + 1) (2 * k.val)) 2 24 := by
        rw [show pair1_lt.sl.v1943_1 d L tab k r g1 g2 hR hin = addf (pair1_lt.sl.v1907_1 d L tab k r g1 g2 hR hin) (pair1_lt.sl.v1942_1 d L tab k r g1 g2 hR hin) from rfl, a_v1907_1]
        exact acc_step d L fl tab (wL L).val (2 * t1.val + 1) (2 * k.val) 0 _ hRA ⟨23, by decide⟩ ⟨2, by decide⟩ _ rfl _ hw_v1919_1 _ (k1_off73_form ..) _ _
      have a_v1979_1 : pair1_lt.sl.v1979_1 d L tab k r g1 g2 hR hin = AccMath.accVec (rowF fl tab (wL L).val (2 * t1.val + 1) (2 * k.val)) (offF fl (wL L).val (2 * t1.val + 1) (2 * k.val)) 2 25 := by
        rw [show pair1_lt.sl.v1979_1 d L tab k r g1 g2 hR hin = addf (pair1_lt.sl.v1943_1 d L tab k r g1 g2 hR hin) (pair1_lt.sl.v1978_1 d L tab k r g1 g2 hR hin) from rfl, a_v1943_1]
        exact acc_step d L fl tab (wL L).val (2 * t1.val + 1) (2 * k.val) 0 _ hRA ⟨24, by decide⟩ ⟨2, by decide⟩ _ rfl _ hw_v1955_1 _ (k1_off74_form ..) _ _
      have a_v2015_1 : pair1_lt.sl.v2015_1 d L tab k r g1 g2 hR hin = AccMath.accVec (rowF fl tab (wL L).val (2 * t1.val + 1) (2 * k.val)) (offF fl (wL L).val (2 * t1.val + 1) (2 * k.val)) 2 26 := by
        rw [show pair1_lt.sl.v2015_1 d L tab k r g1 g2 hR hin = addf (pair1_lt.sl.v1979_1 d L tab k r g1 g2 hR hin) (pair1_lt.sl.v2014_1 d L tab k r g1 g2 hR hin) from rfl, a_v1979_1]
        exact acc_step d L fl tab (wL L).val (2 * t1.val + 1) (2 * k.val) 0 _ hRA ⟨25, by decide⟩ ⟨2, by decide⟩ _ rfl _ hw_v1991_1 _ (k1_off75_form ..) _ _
      have a_v2051_1 : pair1_lt.sl.v2051_1 d L tab k r g1 g2 hR hin = AccMath.accVec (rowF fl tab (wL L).val (2 * t1.val + 1) (2 * k.val)) (offF fl (wL L).val (2 * t1.val + 1) (2 * k.val)) 2 27 := by
        rw [show pair1_lt.sl.v2051_1 d L tab k r g1 g2 hR hin = addf (pair1_lt.sl.v2015_1 d L tab k r g1 g2 hR hin) (pair1_lt.sl.v2050_1 d L tab k r g1 g2 hR hin) from rfl, a_v2015_1]
        exact acc_step d L fl tab (wL L).val (2 * t1.val + 1) (2 * k.val) 0 _ hRA ⟨26, by decide⟩ ⟨2, by decide⟩ _ rfl _ hw_v2027_1 _ (k1_off76_form ..) _ _
      have a_v2087_1 : pair1_lt.sl.v2087_1 d L tab k r g1 g2 hR hin = AccMath.accVec (rowF fl tab (wL L).val (2 * t1.val + 1) (2 * k.val)) (offF fl (wL L).val (2 * t1.val + 1) (2 * k.val)) 2 28 := by
        rw [show pair1_lt.sl.v2087_1 d L tab k r g1 g2 hR hin = addf (pair1_lt.sl.v2051_1 d L tab k r g1 g2 hR hin) (pair1_lt.sl.v2086_1 d L tab k r g1 g2 hR hin) from rfl, a_v2051_1]
        exact acc_step d L fl tab (wL L).val (2 * t1.val + 1) (2 * k.val) 0 _ hRA ⟨27, by decide⟩ ⟨2, by decide⟩ _ rfl _ hw_v2063_1 _ (k1_off77_form ..) _ _
      have a_v2123_1 : pair1_lt.sl.v2123_1 d L tab k r g1 g2 hR hin = AccMath.accVec (rowF fl tab (wL L).val (2 * t1.val + 1) (2 * k.val)) (offF fl (wL L).val (2 * t1.val + 1) (2 * k.val)) 2 29 := by
        rw [show pair1_lt.sl.v2123_1 d L tab k r g1 g2 hR hin = addf (pair1_lt.sl.v2087_1 d L tab k r g1 g2 hR hin) (pair1_lt.sl.v2122_1 d L tab k r g1 g2 hR hin) from rfl, a_v2087_1]
        exact acc_step d L fl tab (wL L).val (2 * t1.val + 1) (2 * k.val) 0 _ hRA ⟨28, by decide⟩ ⟨2, by decide⟩ _ rfl _ hw_v2099_1 _ (k1_off78_form ..) _ _
      have a_v2159_1 : pair1_lt.sl.v2159_1 d L tab k r g1 g2 hR hin = AccMath.accVec (rowF fl tab (wL L).val (2 * t1.val + 1) (2 * k.val)) (offF fl (wL L).val (2 * t1.val + 1) (2 * k.val)) 2 30 := by
        rw [show pair1_lt.sl.v2159_1 d L tab k r g1 g2 hR hin = addf (pair1_lt.sl.v2123_1 d L tab k r g1 g2 hR hin) (pair1_lt.sl.v2158_1 d L tab k r g1 g2 hR hin) from rfl, a_v2123_1]
        exact acc_step d L fl tab (wL L).val (2 * t1.val + 1) (2 * k.val) 0 _ hRA ⟨29, by decide⟩ ⟨2, by decide⟩ _ rfl _ hw_v2135_1 _ (k1_off79_form ..) _ _
      have a_v2195_1 : pair1_lt.sl.v2195_1 d L tab k r g1 g2 hR hin = AccMath.accVec (rowF fl tab (wL L).val (2 * t1.val + 1) (2 * k.val)) (offF fl (wL L).val (2 * t1.val + 1) (2 * k.val)) 2 31 := by
        rw [show pair1_lt.sl.v2195_1 d L tab k r g1 g2 hR hin = addf (pair1_lt.sl.v2159_1 d L tab k r g1 g2 hR hin) (pair1_lt.sl.v2194_1 d L tab k r g1 g2 hR hin) from rfl, a_v2159_1]
        exact acc_step d L fl tab (wL L).val (2 * t1.val + 1) (2 * k.val) 0 _ hRA ⟨30, by decide⟩ ⟨2, by decide⟩ _ rfl _ hw_v2171_1 _ (k1_off80_form ..) _ _
      have a_v2231_1 : pair1_lt.sl.v2231_1 d L tab k r g1 g2 hR hin = AccMath.accVec (rowF fl tab (wL L).val (2 * t1.val + 1) (2 * k.val)) (offF fl (wL L).val (2 * t1.val + 1) (2 * k.val)) 2 32 := by
        rw [show pair1_lt.sl.v2231_1 d L tab k r g1 g2 hR hin = addf (pair1_lt.sl.v2195_1 d L tab k r g1 g2 hR hin) (pair1_lt.sl.v2230_1 d L tab k r g1 g2 hR hin) from rfl, a_v2195_1]
        exact acc_step d L fl tab (wL L).val (2 * t1.val + 1) (2 * k.val) 0 _ hRA ⟨31, by decide⟩ ⟨2, by decide⟩ _ rfl _ hw_v2207_1 _ (k1_off81_form ..) _ _
      have a_v1691_2 : pair1_lt.sl.v1691_2 d L tab k r g1 g2 hR hin = AccMath.accVec (rowF fl tab (wL L).val (2 * t1.val + 1) (2 * k.val)) (offF fl (wL L).val (2 * t1.val + 1) (2 * k.val)) 2 33 := by
        rw [show pair1_lt.sl.v1691_2 d L tab k r g1 g2 hR hin = addf (pair1_lt.sl.v2231_1 d L tab k r g1 g2 hR hin) (pair1_lt.sl.v1690_2 d L tab k r g1 g2 hR hin) from rfl, a_v2231_1]
        exact acc_step d L fl tab (wL L).val (2 * t1.val + 1) (2 * k.val) 0 _ hRA ⟨32, by decide⟩ ⟨2, by decide⟩ _ rfl _ hw_v1667_2 _ (k1_off66_form ..) _ _
      have a_v1727_2 : pair1_lt.sl.v1727_2 d L tab k r g1 g2 hR hin = AccMath.accVec (rowF fl tab (wL L).val (2 * t1.val + 1) (2 * k.val)) (offF fl (wL L).val (2 * t1.val + 1) (2 * k.val)) 2 34 := by
        rw [show pair1_lt.sl.v1727_2 d L tab k r g1 g2 hR hin = addf (pair1_lt.sl.v1691_2 d L tab k r g1 g2 hR hin) (pair1_lt.sl.v1726_2 d L tab k r g1 g2 hR hin) from rfl, a_v1691_2]
        exact acc_step d L fl tab (wL L).val (2 * t1.val + 1) (2 * k.val) 0 _ hRA ⟨33, by decide⟩ ⟨2, by decide⟩ _ rfl _ hw_v1703_2 _ (k1_off67_form ..) _ _
      have a_v1763_2 : pair1_lt.sl.v1763_2 d L tab k r g1 g2 hR hin = AccMath.accVec (rowF fl tab (wL L).val (2 * t1.val + 1) (2 * k.val)) (offF fl (wL L).val (2 * t1.val + 1) (2 * k.val)) 2 35 := by
        rw [show pair1_lt.sl.v1763_2 d L tab k r g1 g2 hR hin = addf (pair1_lt.sl.v1727_2 d L tab k r g1 g2 hR hin) (pair1_lt.sl.v1762_2 d L tab k r g1 g2 hR hin) from rfl, a_v1727_2]
        exact acc_step d L fl tab (wL L).val (2 * t1.val + 1) (2 * k.val) 0 _ hRA ⟨34, by decide⟩ ⟨2, by decide⟩ _ rfl _ hw_v1739_2 _ (k1_off68_form ..) _ _
      have a_v1799_2 : pair1_lt.sl.v1799_2 d L tab k r g1 g2 hR hin = AccMath.accVec (rowF fl tab (wL L).val (2 * t1.val + 1) (2 * k.val)) (offF fl (wL L).val (2 * t1.val + 1) (2 * k.val)) 2 36 := by
        rw [show pair1_lt.sl.v1799_2 d L tab k r g1 g2 hR hin = addf (pair1_lt.sl.v1763_2 d L tab k r g1 g2 hR hin) (pair1_lt.sl.v1798_2 d L tab k r g1 g2 hR hin) from rfl, a_v1763_2]
        exact acc_step d L fl tab (wL L).val (2 * t1.val + 1) (2 * k.val) 0 _ hRA ⟨35, by decide⟩ ⟨2, by decide⟩ _ rfl _ hw_v1775_2 _ (k1_off69_form ..) _ _
      have a_v1835_2 : pair1_lt.sl.v1835_2 d L tab k r g1 g2 hR hin = AccMath.accVec (rowF fl tab (wL L).val (2 * t1.val + 1) (2 * k.val)) (offF fl (wL L).val (2 * t1.val + 1) (2 * k.val)) 2 37 := by
        rw [show pair1_lt.sl.v1835_2 d L tab k r g1 g2 hR hin = addf (pair1_lt.sl.v1799_2 d L tab k r g1 g2 hR hin) (pair1_lt.sl.v1834_2 d L tab k r g1 g2 hR hin) from rfl, a_v1799_2]
        exact acc_step d L fl tab (wL L).val (2 * t1.val + 1) (2 * k.val) 0 _ hRA ⟨36, by decide⟩ ⟨2, by decide⟩ _ rfl _ hw_v1811_2 _ (k1_off70_form ..) _ _
      have a_v1871_2 : pair1_lt.sl.v1871_2 d L tab k r g1 g2 hR hin = AccMath.accVec (rowF fl tab (wL L).val (2 * t1.val + 1) (2 * k.val)) (offF fl (wL L).val (2 * t1.val + 1) (2 * k.val)) 2 38 := by
        rw [show pair1_lt.sl.v1871_2 d L tab k r g1 g2 hR hin = addf (pair1_lt.sl.v1835_2 d L tab k r g1 g2 hR hin) (pair1_lt.sl.v1870_2 d L tab k r g1 g2 hR hin) from rfl, a_v1835_2]
        exact acc_step d L fl tab (wL L).val (2 * t1.val + 1) (2 * k.val) 0 _ hRA ⟨37, by decide⟩ ⟨2, by decide⟩ _ rfl _ hw_v1847_2 _ (k1_off71_form ..) _ _
      have a_v1907_2 : pair1_lt.sl.v1907_2 d L tab k r g1 g2 hR hin = AccMath.accVec (rowF fl tab (wL L).val (2 * t1.val + 1) (2 * k.val)) (offF fl (wL L).val (2 * t1.val + 1) (2 * k.val)) 2 39 := by
        rw [show pair1_lt.sl.v1907_2 d L tab k r g1 g2 hR hin = addf (pair1_lt.sl.v1871_2 d L tab k r g1 g2 hR hin) (pair1_lt.sl.v1906_2 d L tab k r g1 g2 hR hin) from rfl, a_v1871_2]
        exact acc_step d L fl tab (wL L).val (2 * t1.val + 1) (2 * k.val) 0 _ hRA ⟨38, by decide⟩ ⟨2, by decide⟩ _ rfl _ hw_v1883_2 _ (k1_off72_form ..) _ _
      have a_v1943_2 : pair1_lt.sl.v1943_2 d L tab k r g1 g2 hR hin = AccMath.accVec (rowF fl tab (wL L).val (2 * t1.val + 1) (2 * k.val)) (offF fl (wL L).val (2 * t1.val + 1) (2 * k.val)) 2 40 := by
        rw [show pair1_lt.sl.v1943_2 d L tab k r g1 g2 hR hin = addf (pair1_lt.sl.v1907_2 d L tab k r g1 g2 hR hin) (pair1_lt.sl.v1942_2 d L tab k r g1 g2 hR hin) from rfl, a_v1907_2]
        exact acc_step d L fl tab (wL L).val (2 * t1.val + 1) (2 * k.val) 0 _ hRA ⟨39, by decide⟩ ⟨2, by decide⟩ _ rfl _ hw_v1919_2 _ (k1_off73_form ..) _ _
      have a_v1979_2 : pair1_lt.sl.v1979_2 d L tab k r g1 g2 hR hin = AccMath.accVec (rowF fl tab (wL L).val (2 * t1.val + 1) (2 * k.val)) (offF fl (wL L).val (2 * t1.val + 1) (2 * k.val)) 2 41 := by
        rw [show pair1_lt.sl.v1979_2 d L tab k r g1 g2 hR hin = addf (pair1_lt.sl.v1943_2 d L tab k r g1 g2 hR hin) (pair1_lt.sl.v1978_2 d L tab k r g1 g2 hR hin) from rfl, a_v1943_2]
        exact acc_step d L fl tab (wL L).val (2 * t1.val + 1) (2 * k.val) 0 _ hRA ⟨40, by decide⟩ ⟨2, by decide⟩ _ rfl _ hw_v1955_2 _ (k1_off74_form ..) _ _
      have a_v2015_2 : pair1_lt.sl.v2015_2 d L tab k r g1 g2 hR hin = AccMath.accVec (rowF fl tab (wL L).val (2 * t1.val + 1) (2 * k.val)) (offF fl (wL L).val (2 * t1.val + 1) (2 * k.val)) 2 42 := by
        rw [show pair1_lt.sl.v2015_2 d L tab k r g1 g2 hR hin = addf (pair1_lt.sl.v1979_2 d L tab k r g1 g2 hR hin) (pair1_lt.sl.v2014_2 d L tab k r g1 g2 hR hin) from rfl, a_v1979_2]
        exact acc_step d L fl tab (wL L).val (2 * t1.val + 1) (2 * k.val) 0 _ hRA ⟨41, by decide⟩ ⟨2, by decide⟩ _ rfl _ hw_v1991_2 _ (k1_off75_form ..) _ _
      have a_v2051_2 : pair1_lt.sl.v2051_2 d L tab k r g1 g2 hR hin = AccMath.accVec (rowF fl tab (wL L).val (2 * t1.val + 1) (2 * k.val)) (offF fl (wL L).val (2 * t1.val + 1) (2 * k.val)) 2 43 := by
        rw [show pair1_lt.sl.v2051_2 d L tab k r g1 g2 hR hin = addf (pair1_lt.sl.v2015_2 d L tab k r g1 g2 hR hin) (pair1_lt.sl.v2050_2 d L tab k r g1 g2 hR hin) from rfl, a_v2015_2]
        exact acc_step d L fl tab (wL L).val (2 * t1.val + 1) (2 * k.val) 0 _ hRA ⟨42, by decide⟩ ⟨2, by decide⟩ _ rfl _ hw_v2027_2 _ (k1_off76_form ..) _ _
      have a_v2087_2 : pair1_lt.sl.v2087_2 d L tab k r g1 g2 hR hin = AccMath.accVec (rowF fl tab (wL L).val (2 * t1.val + 1) (2 * k.val)) (offF fl (wL L).val (2 * t1.val + 1) (2 * k.val)) 2 44 := by
        rw [show pair1_lt.sl.v2087_2 d L tab k r g1 g2 hR hin = addf (pair1_lt.sl.v2051_2 d L tab k r g1 g2 hR hin) (pair1_lt.sl.v2086_2 d L tab k r g1 g2 hR hin) from rfl, a_v2051_2]
        exact acc_step d L fl tab (wL L).val (2 * t1.val + 1) (2 * k.val) 0 _ hRA ⟨43, by decide⟩ ⟨2, by decide⟩ _ rfl _ hw_v2063_2 _ (k1_off77_form ..) _ _
      have a_v2123_2 : pair1_lt.sl.v2123_2 d L tab k r g1 g2 hR hin = AccMath.accVec (rowF fl tab (wL L).val (2 * t1.val + 1) (2 * k.val)) (offF fl (wL L).val (2 * t1.val + 1) (2 * k.val)) 2 45 := by
        rw [show pair1_lt.sl.v2123_2 d L tab k r g1 g2 hR hin = addf (pair1_lt.sl.v2087_2 d L tab k r g1 g2 hR hin) (pair1_lt.sl.v2122_2 d L tab k r g1 g2 hR hin) from rfl, a_v2087_2]
        exact acc_step d L fl tab (wL L).val (2 * t1.val + 1) (2 * k.val) 0 _ hRA ⟨44, by decide⟩ ⟨2, by decide⟩ _ rfl _ hw_v2099_2 _ (k1_off78_form ..) _ _
      have a_v2159_2 : pair1_lt.sl.v2159_2 d L tab k r g1 g2 hR hin = AccMath.accVec (rowF fl tab (wL L).val (2 * t1.val + 1) (2 * k.val)) (offF fl (wL L).val (2 * t1.val + 1) (2 * k.val)) 2 46 := by
        rw [show pair1_lt.sl.v2159_2 d L tab k r g1 g2 hR hin = addf (pair1_lt.sl.v2123_2 d L tab k r g1 g2 hR hin) (pair1_lt.sl.v2158_2 d L tab k r g1 g2 hR hin) from rfl, a_v2123_2]
        exact acc_step d L fl tab (wL L).val (2 * t1.val + 1) (2 * k.val) 0 _ hRA ⟨45, by decide⟩ ⟨2, by decide⟩ _ rfl _ hw_v2135_2 _ (k1_off79_form ..) _ _
      have a_v2195_2 : pair1_lt.sl.v2195_2 d L tab k r g1 g2 hR hin = AccMath.accVec (rowF fl tab (wL L).val (2 * t1.val + 1) (2 * k.val)) (offF fl (wL L).val (2 * t1.val + 1) (2 * k.val)) 2 47 := by
        rw [show pair1_lt.sl.v2195_2 d L tab k r g1 g2 hR hin = addf (pair1_lt.sl.v2159_2 d L tab k r g1 g2 hR hin) (pair1_lt.sl.v2194_2 d L tab k r g1 g2 hR hin) from rfl, a_v2159_2]
        exact acc_step d L fl tab (wL L).val (2 * t1.val + 1) (2 * k.val) 0 _ hRA ⟨46, by decide⟩ ⟨2, by decide⟩ _ rfl _ hw_v2171_2 _ (k1_off80_form ..) _ _
      have a_v2231_2 : pair1_lt.sl.v2231_2 d L tab k r g1 g2 hR hin = AccMath.accVec (rowF fl tab (wL L).val (2 * t1.val + 1) (2 * k.val)) (offF fl (wL L).val (2 * t1.val + 1) (2 * k.val)) 2 48 := by
        rw [show pair1_lt.sl.v2231_2 d L tab k r g1 g2 hR hin = addf (pair1_lt.sl.v2195_2 d L tab k r g1 g2 hR hin) (pair1_lt.sl.v2230_2 d L tab k r g1 g2 hR hin) from rfl, a_v2195_2]
        exact acc_step d L fl tab (wL L).val (2 * t1.val + 1) (2 * k.val) 0 _ hRA ⟨47, by decide⟩ ⟨2, by decide⟩ _ rfl _ hw_v2207_2 _ (k1_off81_form ..) _ _
      have a_v1480 : pair1_lt.sl.v1480 d L tab k r g1 g2 hR hin = AccMath.accVec (rowF fl tab (wL L).val (2 * t1.val + 1) (2 * k.val)) (offF fl (wL L).val (2 * t1.val + 1) (2 * k.val)) 2 49 := by
        rw [show pair1_lt.sl.v1480 d L tab k r g1 g2 hR hin = addf (pair1_lt.sl.v2231_2 d L tab k r g1 g2 hR hin) (pair1_lt.sl.v1479 d L tab k r g1 g2 hR hin) from rfl, a_v2231_2]
        exact acc_step d L fl tab (wL L).val (2 * t1.val + 1) (2 * k.val) 0 _ hRA ⟨48, by decide⟩ ⟨2, by decide⟩ _ rfl _ hw_v1456 _ (k1_off83_form ..) _ _
      have a_v1514 : pair1_lt.sl.v1514 d L tab k r g1 g2 hR hin = AccMath.accVec (rowF fl tab (wL L).val (2 * t1.val + 1) (2 * k.val)) (offF fl (wL L).val (2 * t1.val + 1) (2 * k.val)) 2 50 := by
        rw [show pair1_lt.sl.v1514 d L tab k r g1 g2 hR hin = addf (pair1_lt.sl.v1480 d L tab k r g1 g2 hR hin) (pair1_lt.sl.v1513 d L tab k r g1 g2 hR hin) from rfl, a_v1480]
        exact acc_step d L fl tab (wL L).val (2 * t1.val + 1) (2 * k.val) 0 _ hRA ⟨49, by decide⟩ ⟨2, by decide⟩ _ rfl _ hw_v1490 _ (k1_off84_form ..) _ _
      have a_v1445_A3 : pair1_lt.sl.v1445 = AccMath.accVec (rowF fl tab (wL L).val (2 * t1.val + 1) (2 * k.val)) (offF fl (wL L).val (2 * t1.val + 1) (2 * k.val)) 3 0 := acc_zero fl tab (wL L).val (2 * t1.val + 1) (2 * k.val) 3
      have a_v1699 : pair1_lt.sl.v1699 d L tab k r g1 g2 hR hin = AccMath.accVec (rowF fl tab (wL L).val (2 * t1.val + 1) (2 * k.val)) (offF fl (wL L).val (2 * t1.val + 1) (2 * k.val)) 3 1 := by
        rw [show pair1_lt.sl.v1699 d L tab k r g1 g2 hR hin = addf (pair1_lt.sl.v1445) (pair1_lt.sl.v1698 d L tab k r g1 g2 hR hin) from rfl, a_v1445_A3]
        exact acc_step d L fl tab (wL L).val (2 * t1.val + 1) (2 * k.val) 0 _ hRA ⟨0, by decide⟩ ⟨3, by decide⟩ _ rfl _ hw_v1667 _ (k1_off66_form ..) _ _
      have a_v1735 : pair1_lt.sl.v1735 d L tab k r g1 g2 hR hin = AccMath.accVec (rowF fl tab (wL L).val (2 * t1.val + 1) (2 * k.val)) (offF fl (wL L).val (2 * t1.val + 1) (2 * k.val)) 3 2 := by
        rw [show pair1_lt.sl.v1735 d L tab k r g1 g2 hR hin = addf (pair1_lt.sl.v1699 d L tab k r g1 g2 hR hin) (pair1_lt.sl.v1734 d L tab k r g1 g2 hR hin) from rfl, a_v1699]
        exact acc_step d L fl tab (wL L).val (2 * t1.val + 1) (2 * k.val) 0 _ hRA ⟨1, by decide⟩ ⟨3, by decide⟩ _ rfl _ hw_v1703 _ (k1_off67_form ..) _ _
      have a_v1771 : pair1_lt.sl.v1771 d L tab k r g1 g2 hR hin = AccMath.accVec (rowF fl tab (wL L).val (2 * t1.val + 1) (2 * k.val)) (offF fl (wL L).val (2 * t1.val + 1) (2 * k.val)) 3 3 := by
        rw [show pair1_lt.sl.v1771 d L tab k r g1 g2 hR hin = addf (pair1_lt.sl.v1735 d L tab k r g1 g2 hR hin) (pair1_lt.sl.v1770 d L tab k r g1 g2 hR hin) from rfl, a_v1735]
        exact acc_step d L fl tab (wL L).val (2 * t1.val + 1) (2 * k.val) 0 _ hRA ⟨2, by decide⟩ ⟨3, by decide⟩ _ rfl _ hw_v1739 _ (k1_off68_form ..) _ _
      have a_v1807 : pair1_lt.sl.v1807 d L tab k r g1 g2 hR hin = AccMath.accVec (rowF fl tab (wL L).val (2 * t1.val + 1) (2 * k.val)) (offF fl (wL L).val (2 * t1.val + 1) (2 * k.val)) 3 4 := by
        rw [show pair1_lt.sl.v1807 d L tab k r g1 g2 hR hin = addf (pair1_lt.sl.v1771 d L tab k r g1 g2 hR hin) (pair1_lt.sl.v1806 d L tab k r g1 g2 hR hin) from rfl, a_v1771]
        exact acc_step d L fl tab (wL L).val (2 * t1.val + 1) (2 * k.val) 0 _ hRA ⟨3, by decide⟩ ⟨3, by decide⟩ _ rfl _ hw_v1775 _ (k1_off69_form ..) _ _
      have a_v1843 : pair1_lt.sl.v1843 d L tab k r g1 g2 hR hin = AccMath.accVec (rowF fl tab (wL L).val (2 * t1.val + 1) (2 * k.val)) (offF fl (wL L).val (2 * t1.val + 1) (2 * k.val)) 3 5 := by
        rw [show pair1_lt.sl.v1843 d L tab k r g1 g2 hR hin = addf (pair1_lt.sl.v1807 d L tab k r g1 g2 hR hin) (pair1_lt.sl.v1842 d L tab k r g1 g2 hR hin) from rfl, a_v1807]
        exact acc_step d L fl tab (wL L).val (2 * t1.val + 1) (2 * k.val) 0 _ hRA ⟨4, by decide⟩ ⟨3, by decide⟩ _ rfl _ hw_v1811 _ (k1_off70_form ..) _ _
      have a_v1879 : pair1_lt.sl.v1879 d L tab k r g1 g2 hR hin = AccMath.accVec (rowF fl tab (wL L).val (2 * t1.val + 1) (2 * k.val)) (offF fl (wL L).val (2 * t1.val + 1) (2 * k.val)) 3 6 := by
        rw [show pair1_lt.sl.v1879 d L tab k r g1 g2 hR hin = addf (pair1_lt.sl.v1843 d L tab k r g1 g2 hR hin) (pair1_lt.sl.v1878 d L tab k r g1 g2 hR hin) from rfl, a_v1843]
        exact acc_step d L fl tab (wL L).val (2 * t1.val + 1) (2 * k.val) 0 _ hRA ⟨5, by decide⟩ ⟨3, by decide⟩ _ rfl _ hw_v1847 _ (k1_off71_form ..) _ _
      have a_v1915 : pair1_lt.sl.v1915 d L tab k r g1 g2 hR hin = AccMath.accVec (rowF fl tab (wL L).val (2 * t1.val + 1) (2 * k.val)) (offF fl (wL L).val (2 * t1.val + 1) (2 * k.val)) 3 7 := by
        rw [show pair1_lt.sl.v1915 d L tab k r g1 g2 hR hin = addf (pair1_lt.sl.v1879 d L tab k r g1 g2 hR hin) (pair1_lt.sl.v1914 d L tab k r g1 g2 hR hin) from rfl, a_v1879]
        exact acc_step d L fl tab (wL L).val (2 * t1.val + 1) (2 * k.val) 0 _ hRA ⟨6, by decide⟩ ⟨3, by decide⟩ _ rfl _ hw_v1883 _ (k1_off72_form ..) _ _
      have a_v1951 : pair1_lt.sl.v1951 d L tab k r g1 g2 hR hin = AccMath.accVec (rowF fl tab (wL L).val (2 * t1.val + 1) (2 * k.val)) (offF fl (wL L).val (2 * t1.val + 1) (2 * k.val)) 3 8 := by
        rw [show pair1_lt.sl.v1951 d L tab k r g1 g2 hR hin = addf (pair1_lt.sl.v1915 d L tab k r g1 g2 hR hin) (pair1_lt.sl.v1950 d L tab k r g1 g2 hR hin) from rfl, a_v1915]
        exact acc_step d L fl tab (wL L).val (2 * t1.val + 1) (2 * k.val) 0 _ hRA ⟨7, by decide⟩ ⟨3, by decide⟩ _ rfl _ hw_v1919 _ (k1_off73_form ..) _ _
      have a_v1987 : pair1_lt.sl.v1987 d L tab k r g1 g2 hR hin = AccMath.accVec (rowF fl tab (wL L).val (2 * t1.val + 1) (2 * k.val)) (offF fl (wL L).val (2 * t1.val + 1) (2 * k.val)) 3 9 := by
        rw [show pair1_lt.sl.v1987 d L tab k r g1 g2 hR hin = addf (pair1_lt.sl.v1951 d L tab k r g1 g2 hR hin) (pair1_lt.sl.v1986 d L tab k r g1 g2 hR hin) from rfl, a_v1951]
        exact acc_step d L fl tab (wL L).val (2 * t1.val + 1) (2 * k.val) 0 _ hRA ⟨8, by decide⟩ ⟨3, by decide⟩ _ rfl _ hw_v1955 _ (k1_off74_form ..) _ _
      have a_v2023 : pair1_lt.sl.v2023 d L tab k r g1 g2 hR hin = AccMath.accVec (rowF fl tab (wL L).val (2 * t1.val + 1) (2 * k.val)) (offF fl (wL L).val (2 * t1.val + 1) (2 * k.val)) 3 10 := by
        rw [show pair1_lt.sl.v2023 d L tab k r g1 g2 hR hin = addf (pair1_lt.sl.v1987 d L tab k r g1 g2 hR hin) (pair1_lt.sl.v2022 d L tab k r g1 g2 hR hin) from rfl, a_v1987]
        exact acc_step d L fl tab (wL L).val (2 * t1.val + 1) (2 * k.val) 0 _ hRA ⟨9, by decide⟩ ⟨3, by decide⟩ _ rfl _ hw_v1991 _ (k1_off75_form ..) _ _
      have a_v2059 : pair1_lt.sl.v2059 d L tab k r g1 g2 hR hin = AccMath.accVec (rowF fl tab (wL L).val (2 * t1.val + 1) (2 * k.val)) (offF fl (wL L).val (2 * t1.val + 1) (2 * k.val)) 3 11 := by
        rw [show pair1_lt.sl.v2059 d L tab k r g1 g2 hR hin = addf (pair1_lt.sl.v2023 d L tab k r g1 g2 hR hin) (pair1_lt.sl.v2058 d L tab k r g1 g2 hR hin) from rfl, a_v2023]
        exact acc_step d L fl tab (wL L).val (2 * t1.val + 1) (2 * k.val) 0 _ hRA ⟨10, by decide⟩ ⟨3, by decide⟩ _ rfl _ hw_v2027 _ (k1_off76_form ..) _ _
      have a_v2095 : pair1_lt.sl.v2095 d L tab k r g1 g2 hR hin = AccMath.accVec (rowF fl tab (wL L).val (2 * t1.val + 1) (2 * k.val)) (offF fl (wL L).val (2 * t1.val + 1) (2 * k.val)) 3 12 := by
        rw [show pair1_lt.sl.v2095 d L tab k r g1 g2 hR hin = addf (pair1_lt.sl.v2059 d L tab k r g1 g2 hR hin) (pair1_lt.sl.v2094 d L tab k r g1 g2 hR hin) from rfl, a_v2059]
        exact acc_step d L fl tab (wL L).val (2 * t1.val + 1) (2 * k.val) 0 _ hRA ⟨11, by decide⟩ ⟨3, by decide⟩ _ rfl _ hw_v2063 _ (k1_off77_form ..) _ _
      have a_v2131 : pair1_lt.sl.v2131 d L tab k r g1 g2 hR hin = AccMath.accVec (rowF fl tab (wL L).val (2 * t1.val + 1) (2 * k.val)) (offF fl (wL L).val (2 * t1.val + 1) (2 * k.val)) 3 13 := by
        rw [show pair1_lt.sl.v2131 d L tab k r g1 g2 hR hin = addf (pair1_lt.sl.v2095 d L tab k r g1 g2 hR hin) (pair1_lt.sl.v2130 d L tab k r g1 g2 hR hin) from rfl, a_v2095]
        exact acc_step d L fl tab (wL L).val (2 * t1.val + 1) (2 * k.val) 0 _ hRA ⟨12, by decide⟩ ⟨3, by decide⟩ _ rfl _ hw_v2099 _ (k1_off78_form ..) _ _
      have a_v2167 : pair1_lt.sl.v2167 d L tab k r g1 g2 hR hin = AccMath.accVec (rowF fl tab (wL L).val (2 * t1.val + 1) (2 * k.val)) (offF fl (wL L).val (2 * t1.val + 1) (2 * k.val)) 3 14 := by
        rw [show pair1_lt.sl.v2167 d L tab k r g1 g2 hR hin = addf (pair1_lt.sl.v2131 d L tab k r g1 g2 hR hin) (pair1_lt.sl.v2166 d L tab k r g1 g2 hR hin) from rfl, a_v2131]
        exact acc_step d L fl tab (wL L).val (2 * t1.val + 1) (2 * k.val) 0 _ hRA ⟨13, by decide⟩ ⟨3, by decide⟩ _ rfl _ hw_v2135 _ (k1_off79_form ..) _ _
      have a_v2203 : pair1_lt.sl.v2203 d L tab k r g1 g2 hR hin = AccMath.accVec (rowF fl tab (wL L).val (2 * t1.val + 1) (2 * k.val)) (offF fl (wL L).val (2 * t1.val + 1) (2 * k.val)) 3 15 := by
        rw [show pair1_lt.sl.v2203 d L tab k r g1 g2 hR hin = addf (pair1_lt.sl.v2167 d L tab k r g1 g2 hR hin) (pair1_lt.sl.v2202 d L tab k r g1 g2 hR hin) from rfl, a_v2167]
        exact acc_step d L fl tab (wL L).val (2 * t1.val + 1) (2 * k.val) 0 _ hRA ⟨14, by decide⟩ ⟨3, by decide⟩ _ rfl _ hw_v2171 _ (k1_off80_form ..) _ _
      have a_v2239 : pair1_lt.sl.v2239 d L tab k r g1 g2 hR hin = AccMath.accVec (rowF fl tab (wL L).val (2 * t1.val + 1) (2 * k.val)) (offF fl (wL L).val (2 * t1.val + 1) (2 * k.val)) 3 16 := by
        rw [show pair1_lt.sl.v2239 d L tab k r g1 g2 hR hin = addf (pair1_lt.sl.v2203 d L tab k r g1 g2 hR hin) (pair1_lt.sl.v2238 d L tab k r g1 g2 hR hin) from rfl, a_v2203]
        exact acc_step d L fl tab (wL L).val (2 * t1.val + 1) (2 * k.val) 0 _ hRA ⟨15, by decide⟩ ⟨3, by decide⟩ _ rfl _ hw_v2207 _ (k1_off81_form ..) _ _
      have a_v1699_1 : pair1_lt.sl.v1699_1 d L tab k r g1 g2 hR hin = AccMath.accVec (rowF fl tab (wL L).val (2 * t1.val + 1) (2 * k.val)) (offF fl (wL L).val (2 * t1.val + 1) (2 * k.val)) 3 17 := by
        rw [show pair1_lt.sl.v1699_1 d L tab k r g1 g2 hR hin = addf (pair1_lt.sl.v2239 d L tab k r g1 g2 hR hin) (pair1_lt.sl.v1698_1 d L tab k r g1 g2 hR hin) from rfl, a_v2239]
        exact acc_step d L fl tab (wL L).val (2 * t1.val + 1) (2 * k.val) 0 _ hRA ⟨16, by decide⟩ ⟨3, by decide⟩ _ rfl _ hw_v1667_1 _ (k1_off66_form ..) _ _
      have a_v1735_1 : pair1_lt.sl.v1735_1 d L tab k r g1 g2 hR hin = AccMath.accVec (rowF fl tab (wL L).val (2 * t1.val + 1) (2 * k.val)) (offF fl (wL L).val (2 * t1.val + 1) (2 * k.val)) 3 18 := by
        rw [show pair1_lt.sl.v1735_1 d L tab k r g1 g2 hR hin = addf (pair1_lt.sl.v1699_1 d L tab k r g1 g2 hR hin) (pair1_lt.sl.v1734_1 d L tab k r g1 g2 hR hin) from rfl, a_v1699_1]
        exact acc_step d L fl tab (wL L).val (2 * t1.val + 1) (2 * k.val) 0 _ hRA ⟨17, by decide⟩ ⟨3, by decide⟩ _ rfl _ hw_v1703_1 _ (k1_off67_form ..) _ _
      have a_v1771_1 : pair1_lt.sl.v1771_1 d L tab k r g1 g2 hR hin = AccMath.accVec (rowF fl tab (wL L).val (2 * t1.val + 1) (2 * k.val)) (offF fl (wL L).val (2 * t1.val + 1) (2 * k.val)) 3 19 := by
        rw [show pair1_lt.sl.v1771_1 d L tab k r g1 g2 hR hin = addf (pair1_lt.sl.v1735_1 d L tab k r g1 g2 hR hin) (pair1_lt.sl.v1770_1 d L tab k r g1 g2 hR hin) from rfl, a_v1735_1]
        exact acc_step d L fl tab (wL L).val (2 * t1.val + 1) (2 * k.val) 0 _ hRA ⟨18, by decide⟩ ⟨3, by decide⟩ _ rfl _ hw_v1739_1 _ (k1_off68_form ..) _ _
      have a_v1807_1 : pair1_lt.sl.v1807_1 d L tab k r g1 g2 hR hin = AccMath.accVec (rowF fl tab (wL L).val (2 * t1.val + 1) (2 * k.val)) (offF fl (wL L).val (2 * t1.val + 1) (2 * k.val)) 3 20 := by
        rw [show pair1_lt.sl.v1807_1 d L tab k r g1 g2 hR hin = addf (pair1_lt.sl.v1771_1 d L tab k r g1 g2 hR hin) (pair1_lt.sl.v1806_1 d L tab k r g1 g2 hR hin) from rfl, a_v1771_1]
        exact acc_step d L fl tab (wL L).val (2 * t1.val + 1) (2 * k.val) 0 _ hRA ⟨19, by decide⟩ ⟨3, by decide⟩ _ rfl _ hw_v1775_1 _ (k1_off69_form ..) _ _
      have a_v1843_1 : pair1_lt.sl.v1843_1 d L tab k r g1 g2 hR hin = AccMath.accVec (rowF fl tab (wL L).val (2 * t1.val + 1) (2 * k.val)) (offF fl (wL L).val (2 * t1.val + 1) (2 * k.val)) 3 21 := by
        rw [show pair1_lt.sl.v1843_1 d L tab k r g1 g2 hR hin = addf (pair1_lt.sl.v1807_1 d L tab k r g1 g2 hR hin) (pair1_lt.sl.v1842_1 d L tab k r g1 g2 hR hin) from rfl, a_v1807_1]
        exact acc_step d L fl tab (wL L).val (2 * t1.val + 1) (2 * k.val) 0 _ hRA ⟨20, by decide⟩ ⟨3, by decide⟩ _ rfl _ hw_v1811_1 _ (k1_off70_form ..) _ _
      have a_v1879_1 : pair1_lt.sl.v1879_1 d L tab k r g1 g2 hR hin = AccMath.accVec (rowF fl tab (wL L).val (2 * t1.val + 1) (2 * k.val)) (offF fl (wL L).val (2 * t1.val + 1) (2 * k.val)) 3 22 := by
        rw [show pair1_lt.sl.v1879_1 d L tab k r g1 g2 hR hin = addf (pair1_lt.sl.v1843_1 d L tab k r g1 g2 hR hin) (pair1_lt.sl.v1878_1 d L tab k r g1 g2 hR hin) from rfl, a_v1843_1]
        exact acc_step d L fl tab (wL L).val (2 * t1.val + 1) (2 * k.val) 0 _ hRA ⟨21, by decide⟩ ⟨3, by decide⟩ _ rfl _ hw_v1847_1 _ (k1_off71_form ..) _ _
      have a_v1915_1 : pair1_lt.sl.v1915_1 d L tab k r g1 g2 hR hin = AccMath.accVec (rowF fl tab (wL L).val (2 * t1.val + 1) (2 * k.val)) (offF fl (wL L).val (2 * t1.val + 1) (2 * k.val)) 3 23 := by
        rw [show pair1_lt.sl.v1915_1 d L tab k r g1 g2 hR hin = addf (pair1_lt.sl.v1879_1 d L tab k r g1 g2 hR hin) (pair1_lt.sl.v1914_1 d L tab k r g1 g2 hR hin) from rfl, a_v1879_1]
        exact acc_step d L fl tab (wL L).val (2 * t1.val + 1) (2 * k.val) 0 _ hRA ⟨22, by decide⟩ ⟨3, by decide⟩ _ rfl _ hw_v1883_1 _ (k1_off72_form ..) _ _
      have a_v1951_1 : pair1_lt.sl.v1951_1 d L tab k r g1 g2 hR hin = AccMath.accVec (rowF fl tab (wL L).val (2 * t1.val + 1) (2 * k.val)) (offF fl (wL L).val (2 * t1.val + 1) (2 * k.val)) 3 24 := by
        rw [show pair1_lt.sl.v1951_1 d L tab k r g1 g2 hR hin = addf (pair1_lt.sl.v1915_1 d L tab k r g1 g2 hR hin) (pair1_lt.sl.v1950_1 d L tab k r g1 g2 hR hin) from rfl, a_v1915_1]
        exact acc_step d L fl tab (wL L).val (2 * t1.val + 1) (2 * k.val) 0 _ hRA ⟨23, by decide⟩ ⟨3, by decide⟩ _ rfl _ hw_v1919_1 _ (k1_off73_form ..) _ _
      have a_v1987_1 : pair1_lt.sl.v1987_1 d L tab k r g1 g2 hR hin = AccMath.accVec (rowF fl tab (wL L).val (2 * t1.val + 1) (2 * k.val)) (offF fl (wL L).val (2 * t1.val + 1) (2 * k.val)) 3 25 := by
        rw [show pair1_lt.sl.v1987_1 d L tab k r g1 g2 hR hin = addf (pair1_lt.sl.v1951_1 d L tab k r g1 g2 hR hin) (pair1_lt.sl.v1986_1 d L tab k r g1 g2 hR hin) from rfl, a_v1951_1]
        exact acc_step d L fl tab (wL L).val (2 * t1.val + 1) (2 * k.val) 0 _ hRA ⟨24, by decide⟩ ⟨3, by decide⟩ _ rfl _ hw_v1955_1 _ (k1_off74_form ..) _ _
      have a_v2023_1 : pair1_lt.sl.v2023_1 d L tab k r g1 g2 hR hin = AccMath.accVec (rowF fl tab (wL L).val (2 * t1.val + 1) (2 * k.val)) (offF fl (wL L).val (2 * t1.val + 1) (2 * k.val)) 3 26 := by
        rw [show pair1_lt.sl.v2023_1 d L tab k r g1 g2 hR hin = addf (pair1_lt.sl.v1987_1 d L tab k r g1 g2 hR hin) (pair1_lt.sl.v2022_1 d L tab k r g1 g2 hR hin) from rfl, a_v1987_1]
        exact acc_step d L fl tab (wL L).val (2 * t1.val + 1) (2 * k.val) 0 _ hRA ⟨25, by decide⟩ ⟨3, by decide⟩ _ rfl _ hw_v1991_1 _ (k1_off75_form ..) _ _
      have a_v2059_1 : pair1_lt.sl.v2059_1 d L tab k r g1 g2 hR hin = AccMath.accVec (rowF fl tab (wL L).val (2 * t1.val + 1) (2 * k.val)) (offF fl (wL L).val (2 * t1.val + 1) (2 * k.val)) 3 27 := by
        rw [show pair1_lt.sl.v2059_1 d L tab k r g1 g2 hR hin = addf (pair1_lt.sl.v2023_1 d L tab k r g1 g2 hR hin) (pair1_lt.sl.v2058_1 d L tab k r g1 g2 hR hin) from rfl, a_v2023_1]
        exact acc_step d L fl tab (wL L).val (2 * t1.val + 1) (2 * k.val) 0 _ hRA ⟨26, by decide⟩ ⟨3, by decide⟩ _ rfl _ hw_v2027_1 _ (k1_off76_form ..) _ _
      have a_v2095_1 : pair1_lt.sl.v2095_1 d L tab k r g1 g2 hR hin = AccMath.accVec (rowF fl tab (wL L).val (2 * t1.val + 1) (2 * k.val)) (offF fl (wL L).val (2 * t1.val + 1) (2 * k.val)) 3 28 := by
        rw [show pair1_lt.sl.v2095_1 d L tab k r g1 g2 hR hin = addf (pair1_lt.sl.v2059_1 d L tab k r g1 g2 hR hin) (pair1_lt.sl.v2094_1 d L tab k r g1 g2 hR hin) from rfl, a_v2059_1]
        exact acc_step d L fl tab (wL L).val (2 * t1.val + 1) (2 * k.val) 0 _ hRA ⟨27, by decide⟩ ⟨3, by decide⟩ _ rfl _ hw_v2063_1 _ (k1_off77_form ..) _ _
      have a_v2131_1 : pair1_lt.sl.v2131_1 d L tab k r g1 g2 hR hin = AccMath.accVec (rowF fl tab (wL L).val (2 * t1.val + 1) (2 * k.val)) (offF fl (wL L).val (2 * t1.val + 1) (2 * k.val)) 3 29 := by
        rw [show pair1_lt.sl.v2131_1 d L tab k r g1 g2 hR hin = addf (pair1_lt.sl.v2095_1 d L tab k r g1 g2 hR hin) (pair1_lt.sl.v2130_1 d L tab k r g1 g2 hR hin) from rfl, a_v2095_1]
        exact acc_step d L fl tab (wL L).val (2 * t1.val + 1) (2 * k.val) 0 _ hRA ⟨28, by decide⟩ ⟨3, by decide⟩ _ rfl _ hw_v2099_1 _ (k1_off78_form ..) _ _
      have a_v2167_1 : pair1_lt.sl.v2167_1 d L tab k r g1 g2 hR hin = AccMath.accVec (rowF fl tab (wL L).val (2 * t1.val + 1) (2 * k.val)) (offF fl (wL L).val (2 * t1.val + 1) (2 * k.val)) 3 30 := by
        rw [show pair1_lt.sl.v2167_1 d L tab k r g1 g2 hR hin = addf (pair1_lt.sl.v2131_1 d L tab k r g1 g2 hR hin) (pair1_lt.sl.v2166_1 d L tab k r g1 g2 hR hin) from rfl, a_v2131_1]
        exact acc_step d L fl tab (wL L).val (2 * t1.val + 1) (2 * k.val) 0 _ hRA ⟨29, by decide⟩ ⟨3, by decide⟩ _ rfl _ hw_v2135_1 _ (k1_off79_form ..) _ _
      have a_v2203_1 : pair1_lt.sl.v2203_1 d L tab k r g1 g2 hR hin = AccMath.accVec (rowF fl tab (wL L).val (2 * t1.val + 1) (2 * k.val)) (offF fl (wL L).val (2 * t1.val + 1) (2 * k.val)) 3 31 := by
        rw [show pair1_lt.sl.v2203_1 d L tab k r g1 g2 hR hin = addf (pair1_lt.sl.v2167_1 d L tab k r g1 g2 hR hin) (pair1_lt.sl.v2202_1 d L tab k r g1 g2 hR hin) from rfl, a_v2167_1]
        exact acc_step d L fl tab (wL L).val (2 * t1.val + 1) (2 * k.val) 0 _ hRA ⟨30, by decide⟩ ⟨3, by decide⟩ _ rfl _ hw_v2171_1 _ (k1_off80_form ..) _ _
      have a_v2239_1 : pair1_lt.sl.v2239_1 d L tab k r g1 g2 hR hin = AccMath.accVec (rowF fl tab (wL L).val (2 * t1.val + 1) (2 * k.val)) (offF fl (wL L).val (2 * t1.val + 1) (2 * k.val)) 3 32 := by
        rw [show pair1_lt.sl.v2239_1 d L tab k r g1 g2 hR hin = addf (pair1_lt.sl.v2203_1 d L tab k r g1 g2 hR hin) (pair1_lt.sl.v2238_1 d L tab k r g1 g2 hR hin) from rfl, a_v2203_1]
        exact acc_step d L fl tab (wL L).val (2 * t1.val + 1) (2 * k.val) 0 _ hRA ⟨31, by decide⟩ ⟨3, by decide⟩ _ rfl _ hw_v2207_1 _ (k1_off81_form ..) _ _
      have a_v1699_2 : pair1_lt.sl.v1699_2 d L tab k r g1 g2 hR hin = AccMath.accVec (rowF fl tab (wL L).val (2 * t1.val + 1) (2 * k.val)) (offF fl (wL L).val (2 * t1.val + 1) (2 * k.val)) 3 33 := by
        rw [show pair1_lt.sl.v1699_2 d L tab k r g1 g2 hR hin = addf (pair1_lt.sl.v2239_1 d L tab k r g1 g2 hR hin) (pair1_lt.sl.v1698_2 d L tab k r g1 g2 hR hin) from rfl, a_v2239_1]
        exact acc_step d L fl tab (wL L).val (2 * t1.val + 1) (2 * k.val) 0 _ hRA ⟨32, by decide⟩ ⟨3, by decide⟩ _ rfl _ hw_v1667_2 _ (k1_off66_form ..) _ _
      have a_v1735_2 : pair1_lt.sl.v1735_2 d L tab k r g1 g2 hR hin = AccMath.accVec (rowF fl tab (wL L).val (2 * t1.val + 1) (2 * k.val)) (offF fl (wL L).val (2 * t1.val + 1) (2 * k.val)) 3 34 := by
        rw [show pair1_lt.sl.v1735_2 d L tab k r g1 g2 hR hin = addf (pair1_lt.sl.v1699_2 d L tab k r g1 g2 hR hin) (pair1_lt.sl.v1734_2 d L tab k r g1 g2 hR hin) from rfl, a_v1699_2]
        exact acc_step d L fl tab (wL L).val (2 * t1.val + 1) (2 * k.val) 0 _ hRA ⟨33, by decide⟩ ⟨3, by decide⟩ _ rfl _ hw_v1703_2 _ (k1_off67_form ..) _ _
      have a_v1771_2 : pair1_lt.sl.v1771_2 d L tab k r g1 g2 hR hin = AccMath.accVec (rowF fl tab (wL L).val (2 * t1.val + 1) (2 * k.val)) (offF fl (wL L).val (2 * t1.val + 1) (2 * k.val)) 3 35 := by
        rw [show pair1_lt.sl.v1771_2 d L tab k r g1 g2 hR hin = addf (pair1_lt.sl.v1735_2 d L tab k r g1 g2 hR hin) (pair1_lt.sl.v1770_2 d L tab k r g1 g2 hR hin) from rfl, a_v1735_2]
        exact acc_step d L fl tab (wL L).val (2 * t1.val + 1) (2 * k.val) 0 _ hRA ⟨34, by decide⟩ ⟨3, by decide⟩ _ rfl _ hw_v1739_2 _ (k1_off68_form ..) _ _
      have a_v1807_2 : pair1_lt.sl.v1807_2 d L tab k r g1 g2 hR hin = AccMath.accVec (rowF fl tab (wL L).val (2 * t1.val + 1) (2 * k.val)) (offF fl (wL L).val (2 * t1.val + 1) (2 * k.val)) 3 36 := by
        rw [show pair1_lt.sl.v1807_2 d L tab k r g1 g2 hR hin = addf (pair1_lt.sl.v1771_2 d L tab k r g1 g2 hR hin) (pair1_lt.sl.v1806_2 d L tab k r g1 g2 hR hin) from rfl, a_v1771_2]
        exact acc_step d L fl tab (wL L).val (2 * t1.val + 1) (2 * k.val) 0 _ hRA ⟨35, by decide⟩ ⟨3, by decide⟩ _ rfl _ hw_v1775_2 _ (k1_off69_form ..) _ _
      have a_v1843_2 : pair1_lt.sl.v1843_2 d L tab k r g1 g2 hR hin = AccMath.accVec (rowF fl tab (wL L).val (2 * t1.val + 1) (2 * k.val)) (offF fl (wL L).val (2 * t1.val + 1) (2 * k.val)) 3 37 := by
        rw [show pair1_lt.sl.v1843_2 d L tab k r g1 g2 hR hin = addf (pair1_lt.sl.v1807_2 d L tab k r g1 g2 hR hin) (pair1_lt.sl.v1842_2 d L tab k r g1 g2 hR hin) from rfl, a_v1807_2]
        exact acc_step d L fl tab (wL L).val (2 * t1.val + 1) (2 * k.val) 0 _ hRA ⟨36, by decide⟩ ⟨3, by decide⟩ _ rfl _ hw_v1811_2 _ (k1_off70_form ..) _ _
      have a_v1879_2 : pair1_lt.sl.v1879_2 d L tab k r g1 g2 hR hin = AccMath.accVec (rowF fl tab (wL L).val (2 * t1.val + 1) (2 * k.val)) (offF fl (wL L).val (2 * t1.val + 1) (2 * k.val)) 3 38 := by
        rw [show pair1_lt.sl.v1879_2 d L tab k r g1 g2 hR hin = addf (pair1_lt.sl.v1843_2 d L tab k r g1 g2 hR hin) (pair1_lt.sl.v1878_2 d L tab k r g1 g2 hR hin) from rfl, a_v1843_2]
        exact acc_step d L fl tab (wL L).val (2 * t1.val + 1) (2 * k.val) 0 _ hRA ⟨37, by decide⟩ ⟨3, by decide⟩ _ rfl _ hw_v1847_2 _ (k1_off71_form ..) _ _
      have a_v1915_2 : pair1_lt.sl.v1915_2 d L tab k r g1 g2 hR hin = AccMath.accVec (rowF fl tab (wL L).val (2 * t1.val + 1) (2 * k.val)) (offF fl (wL L).val (2 * t1.val + 1) (2 * k.val)) 3 39 := by
        rw [show pair1_lt.sl.v1915_2 d L tab k r g1 g2 hR hin = addf (pair1_lt.sl.v1879_2 d L tab k r g1 g2 hR hin) (pair1_lt.sl.v1914_2 d L tab k r g1 g2 hR hin) from rfl, a_v1879_2]
        exact acc_step d L fl tab (wL L).val (2 * t1.val + 1) (2 * k.val) 0 _ hRA ⟨38, by decide⟩ ⟨3, by decide⟩ _ rfl _ hw_v1883_2 _ (k1_off72_form ..) _ _
      have a_v1951_2 : pair1_lt.sl.v1951_2 d L tab k r g1 g2 hR hin = AccMath.accVec (rowF fl tab (wL L).val (2 * t1.val + 1) (2 * k.val)) (offF fl (wL L).val (2 * t1.val + 1) (2 * k.val)) 3 40 := by
        rw [show pair1_lt.sl.v1951_2 d L tab k r g1 g2 hR hin = addf (pair1_lt.sl.v1915_2 d L tab k r g1 g2 hR hin) (pair1_lt.sl.v1950_2 d L tab k r g1 g2 hR hin) from rfl, a_v1915_2]
        exact acc_step d L fl tab (wL L).val (2 * t1.val + 1) (2 * k.val) 0 _ hRA ⟨39, by decide⟩ ⟨3, by decide⟩ _ rfl _ hw_v1919_2 _ (k1_off73_form ..) _ _
      have a_v1987_2 : pair1_lt.sl.v1987_2 d L tab k r g1 g2 hR hin = AccMath.accVec (rowF fl tab (wL L).val (2 * t1.val + 1) (2 * k.val)) (offF fl (wL L).val (2 * t1.val + 1) (2 * k.val)) 3 41 := by
        rw [show pair1_lt.sl.v1987_2 d L tab k r g1 g2 hR hin = addf (pair1_lt.sl.v1951_2 d L tab k r g1 g2 hR hin) (pair1_lt.sl.v1986_2 d L tab k r g1 g2 hR hin) from rfl, a_v1951_2]
        exact acc_step d L fl tab (wL L).val (2 * t1.val + 1) (2 * k.val) 0 _ hRA ⟨40, by decide⟩ ⟨3, by decide⟩ _ rfl _ hw_v1955_2 _ (k1_off74_form ..) _ _
      have a_v2023_2 : pair1_lt.sl.v2023_2 d L tab k r g1 g2 hR hin = AccMath.accVec (rowF fl tab (wL L).val (2 * t1.val + 1) (2 * k.val)) (offF fl (wL L).val (2 * t1.val + 1) (2 * k.val)) 3 42 := by
        rw [show pair1_lt.sl.v2023_2 d L tab k r g1 g2 hR hin = addf (pair1_lt.sl.v1987_2 d L tab k r g1 g2 hR hin) (pair1_lt.sl.v2022_2 d L tab k r g1 g2 hR hin) from rfl, a_v1987_2]
        exact acc_step d L fl tab (wL L).val (2 * t1.val + 1) (2 * k.val) 0 _ hRA ⟨41, by decide⟩ ⟨3, by decide⟩ _ rfl _ hw_v1991_2 _ (k1_off75_form ..) _ _
      have a_v2059_2 : pair1_lt.sl.v2059_2 d L tab k r g1 g2 hR hin = AccMath.accVec (rowF fl tab (wL L).val (2 * t1.val + 1) (2 * k.val)) (offF fl (wL L).val (2 * t1.val + 1) (2 * k.val)) 3 43 := by
        rw [show pair1_lt.sl.v2059_2 d L tab k r g1 g2 hR hin = addf (pair1_lt.sl.v2023_2 d L tab k r g1 g2 hR hin) (pair1_lt.sl.v2058_2 d L tab k r g1 g2 hR hin) from rfl, a_v2023_2]
        exact acc_step d L fl tab (wL L).val (2 * t1.val + 1) (2 * k.val) 0 _ hRA ⟨42, by decide⟩ ⟨3, by decide⟩ _ rfl _ hw_v2027_2 _ (k1_off76_form ..) _ _
      have a_v2095_2 : pair1_lt.sl.v2095_2 d L tab k r g1 g2 hR hin = AccMath.accVec (rowF fl tab (wL L).val (2 * t1.val + 1) (2 * k.val)) (offF fl (wL L).val (2 * t1.val + 1) (2 * k.val)) 3 44 := by
        rw [show pair1_lt.sl.v2095_2 d L tab k r g1 g2 hR hin = addf (pair1_lt.sl.v2059_2 d L tab k r g1 g2 hR hin) (pair1_lt.sl.v2094_2 d L tab k r g1 g2 hR hin) from rfl, a_v2059_2]
        exact acc_step d L fl tab (wL L).val (2 * t1.val + 1) (2 * k.val) 0 _ hRA ⟨43, by decide⟩ ⟨3, by decide⟩ _ rfl _ hw_v2063_2 _ (k1_off77_form ..) _ _
      have a_v2131_2 : pair1_lt.sl.v2131_2 d L tab k r g1 g2 hR hin = AccMath.accVec (rowF fl tab (wL L).val (2 * t1.val + 1) (2 * k.val)) (offF fl (wL L).val (2 * t1.val + 1) (2 * k.val)) 3 45 := by
        rw [show pair1_lt.sl.v2131_2 d L tab k r g1 g2 hR hin = addf (pair1_lt.sl.v2095_2 d L tab k r g1 g2 hR hin) (pair1_lt.sl.v2130_2 d L tab k r g1 g2 hR hin) from rfl, a_v2095_2]
        exact acc_step d L fl tab (wL L).val (2 * t1.val + 1) (2 * k.val) 0 _ hRA ⟨44, by decide⟩ ⟨3, by decide⟩ _ rfl _ hw_v2099_2 _ (k1_off78_form ..) _ _
      have a_v2167_2 : pair1_lt.sl.v2167_2 d L tab k r g1 g2 hR hin = AccMath.accVec (rowF fl tab (wL L).val (2 * t1.val + 1) (2 * k.val)) (offF fl (wL L).val (2 * t1.val + 1) (2 * k.val)) 3 46 := by
        rw [show pair1_lt.sl.v2167_2 d L tab k r g1 g2 hR hin = addf (pair1_lt.sl.v2131_2 d L tab k r g1 g2 hR hin) (pair1_lt.sl.v2166_2 d L tab k r g1 g2 hR hin) from rfl, a_v2131_2]
        exact acc_step d L fl tab (wL L).val (2 * t1.val + 1) (2 * k.val) 0 _ hRA ⟨45, by decide⟩ ⟨3, by decide⟩ _ rfl _ hw_v2135_2 _ (k1_off79_form ..) _ _
      have a_v2203_2 : pair1_lt.sl.v2203_2 d L tab k r g1 g2 hR hin = AccMath.accVec (rowF fl tab (wL L).val (2 * t1.val + 1) (2 * k.val)) (offF fl (wL L).val (2 * t1.val + 1) (2 * k.val)) 3 47 := by
        rw [show pair1_lt.sl.v2203_2 d L tab k r g1 g2 hR hin = addf (pair1_lt.sl.v2167_2 d L tab k r g1 g2 hR hin) (pair1_lt.sl.v2202_2 d L tab k r g1 g2 hR hin) from rfl, a_v2167_2]
        exact acc_step d L fl tab (wL L).val (2 * t1.val + 1) (2 * k.val) 0 _ hRA ⟨46, by decide⟩ ⟨3, by decide⟩ _ rfl _ hw_v2171_2 _ (k1_off80_form ..) _ _
      have a_v2239_2 : pair1_lt.sl.v2239_2 d L tab k r g1 g2 hR hin = AccMath.accVec (rowF fl tab (wL L).val (2 * t1.val + 1) (2 * k.val)) (offF fl (wL L).val (2 * t1.val + 1) (2 * k.val)) 3 48 := by
        rw [show pair1_lt.sl.v2239_2 d L tab k r g1 g2 hR hin = addf (pair1_lt.sl.v2203_2 d L tab k r g1 g2 hR hin) (pair1_lt.sl.v2238_2 d L tab k r g1 g2 hR hin) from rfl, a_v2203_2]
        exact acc_step d L fl tab (wL L).val (2 * t1.val + 1) (2 * k.val) 0 _ hRA ⟨47, by decide⟩ ⟨3, by decide⟩ _ rfl _ hw_v2207_2 _ (k1_off81_form ..) _ _
      have a_v1488 : pair1_lt.sl.v1488 d L tab k r g1 g2 hR hin = AccMath.accVec (rowF fl tab (wL L).val (2 * t1.val + 1) (2 * k.val)) (offF fl (wL L).val (2 * t1.val + 1) (2 * k.val)) 3 49 := by
        rw [show pair1_lt.sl.v1488 d L tab k r g1 g2 hR hin = addf (pair1_lt.sl.v2239_2 d L tab k r g1 g2 hR hin) (pair1_lt.sl.v1487 d L tab k r g1 g2 hR hin) from rfl, a_v2239_2]
        exact acc_step d L fl tab (wL L).val (2 * t1.val + 1) (2 * k.val) 0 _ hRA ⟨48, by decide⟩ ⟨3, by decide⟩ _ rfl _ hw_v1456 _ (k1_off83_form ..) _ _
      have a_v1522 : pair1_lt.sl.v1522 d L tab k r g1 g2 hR hin = AccMath.accVec (rowF fl tab (wL L).val (2 * t1.val + 1) (2 * k.val)) (offF fl (wL L).val (2 * t1.val + 1) (2 * k.val)) 3 50 := by
        rw [show pair1_lt.sl.v1522 d L tab k r g1 g2 hR hin = addf (pair1_lt.sl.v1488 d L tab k r g1 g2 hR hin) (pair1_lt.sl.v1521 d L tab k r g1 g2 hR hin) from rfl, a_v1488]
        exact acc_step d L fl tab (wL L).val (2 * t1.val + 1) (2 * k.val) 0 _ hRA ⟨49, by decide⟩ ⟨3, by decide⟩ _ rfl _ hw_v1490 _ (k1_off84_form ..) _ _
      have a_v1561_B0 : pair1_lt.sl.v1561 = AccMath.accVec (rowF fl tab (wL L).val (2 * t1.val + 1) (2 * k.val + 1)) (offF fl (wL L).val (2 * t1.val + 1) (2 * k.val + 1)) 0 0 := acc_zero fl tab (wL L).val (2 * t1.val + 1) (2 * k.val + 1) 0
      have a_v1675_3 : pair1_lt.sl.v1675_3 d L tab k r g1 g2 hR hin h9 = AccMath.accVec (rowF fl tab (wL L).val (2 * t1.val + 1) (2 * k.val + 1)) (offF fl (wL L).val (2 * t1.val + 1) (2 * k.val + 1)) 0 1 := by
        rw [show pair1_lt.sl.v1675_3 d L tab k r g1 g2 hR hin h9 = addf (pair1_lt.sl.v1561) (pair1_lt.sl.v1674_3 d L tab k r g1 g2 hR hin h9) from rfl, a_v1561_B0]
        exact acc_step d L fl tab (wL L).val (2 * t1.val + 1) (2 * k.val + 1) 1 _ hRB ⟨0, by decide⟩ ⟨0, by decide⟩ _ rfl _ hw_v1667_3 _ (k1_off93_form ..) _ _
      have a_v1711_3 : pair1_lt.sl.v1711_3 d L tab k r g1 g2 hR hin h9 = AccMath.accVec (rowF fl tab (wL L).val (2 * t1.val + 1) (2 * k.val + 1)) (offF fl (wL L).val (2 * t1.val + 1) (2 * k.val + 1)) 0 2 := by
        rw [show pair1_lt.sl.v1711_3 d L tab k r g1 g2 hR hin h9 = addf (pair1_lt.sl.v1675_3 d L tab k r g1 g2 hR hin h9) (pair1_lt.sl.v1710_3 d L tab k r g1 g2 hR hin h9) from rfl, a_v1675_3]
        exact acc_step d L fl tab (wL L).val (2 * t1.val + 1) (2 * k.val + 1) 1 _ hRB ⟨1, by decide⟩ ⟨0, by decide⟩ _ rfl _ hw_v1703_3 _ (k1_off94_form ..) _ _
      have a_v1747_3 : pair1_lt.sl.v1747_3 d L tab k r g1 g2 hR hin h9 = AccMath.accVec (rowF fl tab (wL L).val (2 * t1.val + 1) (2 * k.val + 1)) (offF fl (wL L).val (2 * t1.val + 1) (2 * k.val + 1)) 0 3 := by
        rw [show pair1_lt.sl.v1747_3 d L tab k r g1 g2 hR hin h9 = addf (pair1_lt.sl.v1711_3 d L tab k r g1 g2 hR hin h9) (pair1_lt.sl.v1746_3 d L tab k r g1 g2 hR hin h9) from rfl, a_v1711_3]
        exact acc_step d L fl tab (wL L).val (2 * t1.val + 1) (2 * k.val + 1) 1 _ hRB ⟨2, by decide⟩ ⟨0, by decide⟩ _ rfl _ hw_v1739_3 _ (k1_off95_form ..) _ _
      have a_v1783_3 : pair1_lt.sl.v1783_3 d L tab k r g1 g2 hR hin h9 = AccMath.accVec (rowF fl tab (wL L).val (2 * t1.val + 1) (2 * k.val + 1)) (offF fl (wL L).val (2 * t1.val + 1) (2 * k.val + 1)) 0 4 := by
        rw [show pair1_lt.sl.v1783_3 d L tab k r g1 g2 hR hin h9 = addf (pair1_lt.sl.v1747_3 d L tab k r g1 g2 hR hin h9) (pair1_lt.sl.v1782_3 d L tab k r g1 g2 hR hin h9) from rfl, a_v1747_3]
        exact acc_step d L fl tab (wL L).val (2 * t1.val + 1) (2 * k.val + 1) 1 _ hRB ⟨3, by decide⟩ ⟨0, by decide⟩ _ rfl _ hw_v1775_3 _ (k1_off96_form ..) _ _
      have a_v1819_3 : pair1_lt.sl.v1819_3 d L tab k r g1 g2 hR hin h9 = AccMath.accVec (rowF fl tab (wL L).val (2 * t1.val + 1) (2 * k.val + 1)) (offF fl (wL L).val (2 * t1.val + 1) (2 * k.val + 1)) 0 5 := by
        rw [show pair1_lt.sl.v1819_3 d L tab k r g1 g2 hR hin h9 = addf (pair1_lt.sl.v1783_3 d L tab k r g1 g2 hR hin h9) (pair1_lt.sl.v1818_3 d L tab k r g1 g2 hR hin h9) from rfl, a_v1783_3]
        exact acc_step d L fl tab (wL L).val (2 * t1.val + 1) (2 * k.val + 1) 1 _ hRB ⟨4, by decide⟩ ⟨0, by decide⟩ _ rfl _ hw_v1811_3 _ (k1_off97_form ..) _ _
      have a_v1855_3 : pair1_lt.sl.v1855_3 d L tab k r g1 g2 hR hin h9 = AccMath.accVec (rowF fl tab (wL L).val (2 * t1.val + 1) (2 * k.val + 1)) (offF fl (wL L).val (2 * t1.val + 1) (2 * k.val + 1)) 0 6 := by
        rw [show pair1_lt.sl.v1855_3 d L tab k r g1 g2 hR hin h9 = addf (pair1_lt.sl.v1819_3 d L tab k r g1 g2 hR hin h9) (pair1_lt.sl.v1854_3 d L tab k r g1 g2 hR hin h9) from rfl, a_v1819_3]
        exact acc_step d L fl tab (wL L).val (2 * t1.val + 1) (2 * k.val + 1) 1 _ hRB ⟨5, by decide⟩ ⟨0, by decide⟩ _ rfl _ hw_v1847_3 _ (k1_off98_form ..) _ _
      have a_v1891_3 : pair1_lt.sl.v1891_3 d L tab k r g1 g2 hR hin h9 = AccMath.accVec (rowF fl tab (wL L).val (2 * t1.val + 1) (2 * k.val + 1)) (offF fl (wL L).val (2 * t1.val + 1) (2 * k.val + 1)) 0 7 := by
        rw [show pair1_lt.sl.v1891_3 d L tab k r g1 g2 hR hin h9 = addf (pair1_lt.sl.v1855_3 d L tab k r g1 g2 hR hin h9) (pair1_lt.sl.v1890_3 d L tab k r g1 g2 hR hin h9) from rfl, a_v1855_3]
        exact acc_step d L fl tab (wL L).val (2 * t1.val + 1) (2 * k.val + 1) 1 _ hRB ⟨6, by decide⟩ ⟨0, by decide⟩ _ rfl _ hw_v1883_3 _ (k1_off99_form ..) _ _
      have a_v1927_3 : pair1_lt.sl.v1927_3 d L tab k r g1 g2 hR hin h9 = AccMath.accVec (rowF fl tab (wL L).val (2 * t1.val + 1) (2 * k.val + 1)) (offF fl (wL L).val (2 * t1.val + 1) (2 * k.val + 1)) 0 8 := by
        rw [show pair1_lt.sl.v1927_3 d L tab k r g1 g2 hR hin h9 = addf (pair1_lt.sl.v1891_3 d L tab k r g1 g2 hR hin h9) (pair1_lt.sl.v1926_3 d L tab k r g1 g2 hR hin h9) from rfl, a_v1891_3]
        exact acc_step d L fl tab (wL L).val (2 * t1.val + 1) (2 * k.val + 1) 1 _ hRB ⟨7, by decide⟩ ⟨0, by decide⟩ _ rfl _ hw_v1919_3 _ (k1_off100_form ..) _ _
      have a_v1963_3 : pair1_lt.sl.v1963_3 d L tab k r g1 g2 hR hin h9 = AccMath.accVec (rowF fl tab (wL L).val (2 * t1.val + 1) (2 * k.val + 1)) (offF fl (wL L).val (2 * t1.val + 1) (2 * k.val + 1)) 0 9 := by
        rw [show pair1_lt.sl.v1963_3 d L tab k r g1 g2 hR hin h9 = addf (pair1_lt.sl.v1927_3 d L tab k r g1 g2 hR hin h9) (pair1_lt.sl.v1962_3 d L tab k r g1 g2 hR hin h9) from rfl, a_v1927_3]
        exact acc_step d L fl tab (wL L).val (2 * t1.val + 1) (2 * k.val + 1) 1 _ hRB ⟨8, by decide⟩ ⟨0, by decide⟩ _ rfl _ hw_v1955_3 _ (k1_off101_form ..) _ _
      have a_v1999_3 : pair1_lt.sl.v1999_3 d L tab k r g1 g2 hR hin h9 = AccMath.accVec (rowF fl tab (wL L).val (2 * t1.val + 1) (2 * k.val + 1)) (offF fl (wL L).val (2 * t1.val + 1) (2 * k.val + 1)) 0 10 := by
        rw [show pair1_lt.sl.v1999_3 d L tab k r g1 g2 hR hin h9 = addf (pair1_lt.sl.v1963_3 d L tab k r g1 g2 hR hin h9) (pair1_lt.sl.v1998_3 d L tab k r g1 g2 hR hin h9) from rfl, a_v1963_3]
        exact acc_step d L fl tab (wL L).val (2 * t1.val + 1) (2 * k.val + 1) 1 _ hRB ⟨9, by decide⟩ ⟨0, by decide⟩ _ rfl _ hw_v1991_3 _ (k1_off102_form ..) _ _
      have a_v2035_3 : pair1_lt.sl.v2035_3 d L tab k r g1 g2 hR hin h9 = AccMath.accVec (rowF fl tab (wL L).val (2 * t1.val + 1) (2 * k.val + 1)) (offF fl (wL L).val (2 * t1.val + 1) (2 * k.val + 1)) 0 11 := by
        rw [show pair1_lt.sl.v2035_3 d L tab k r g1 g2 hR hin h9 = addf (pair1_lt.sl.v1999_3 d L tab k r g1 g2 hR hin h9) (pair1_lt.sl.v2034_3 d L tab k r g1 g2 hR hin h9) from rfl, a_v1999_3]
        exact acc_step d L fl tab (wL L).val (2 * t1.val + 1) (2 * k.val + 1) 1 _ hRB ⟨10, by decide⟩ ⟨0, by decide⟩ _ rfl _ hw_v2027_3 _ (k1_off103_form ..) _ _
      have a_v2071_3 : pair1_lt.sl.v2071_3 d L tab k r g1 g2 hR hin h9 = AccMath.accVec (rowF fl tab (wL L).val (2 * t1.val + 1) (2 * k.val + 1)) (offF fl (wL L).val (2 * t1.val + 1) (2 * k.val + 1)) 0 12 := by
        rw [show pair1_lt.sl.v2071_3 d L tab k r g1 g2 hR hin h9 = addf (pair1_lt.sl.v2035_3 d L tab k r g1 g2 hR hin h9) (pair1_lt.sl.v2070_3 d L tab k r g1 g2 hR hin h9) from rfl, a_v2035_3]
        exact acc_step d L fl tab (wL L).val (2 * t1.val + 1) (2 * k.val + 1) 1 _ hRB ⟨11, by decide⟩ ⟨0, by decide⟩ _ rfl _ hw_v2063_3 _ (k1_off104_form ..) _ _
      have a_v2107_3 : pair1_lt.sl.v2107_3 d L tab k r g1 g2 hR hin h9 = AccMath.accVec (rowF fl tab (wL L).val (2 * t1.val + 1) (2 * k.val + 1)) (offF fl (wL L).val (2 * t1.val + 1) (2 * k.val + 1)) 0 13 := by
        rw [show pair1_lt.sl.v2107_3 d L tab k r g1 g2 hR hin h9 = addf (pair1_lt.sl.v2071_3 d L tab k r g1 g2 hR hin h9) (pair1_lt.sl.v2106_3 d L tab k r g1 g2 hR hin h9) from rfl, a_v2071_3]
        exact acc_step d L fl tab (wL L).val (2 * t1.val + 1) (2 * k.val + 1) 1 _ hRB ⟨12, by decide⟩ ⟨0, by decide⟩ _ rfl _ hw_v2099_3 _ (k1_off105_form ..) _ _
      have a_v2143_3 : pair1_lt.sl.v2143_3 d L tab k r g1 g2 hR hin h9 = AccMath.accVec (rowF fl tab (wL L).val (2 * t1.val + 1) (2 * k.val + 1)) (offF fl (wL L).val (2 * t1.val + 1) (2 * k.val + 1)) 0 14 := by
        rw [show pair1_lt.sl.v2143_3 d L tab k r g1 g2 hR hin h9 = addf (pair1_lt.sl.v2107_3 d L tab k r g1 g2 hR hin h9) (pair1_lt.sl.v2142_3 d L tab k r g1 g2 hR hin h9) from rfl, a_v2107_3]
        exact acc_step d L fl tab (wL L).val (2 * t1.val + 1) (2 * k.val + 1) 1 _ hRB ⟨13, by decide⟩ ⟨0, by decide⟩ _ rfl _ hw_v2135_3 _ (k1_off106_form ..) _ _
      have a_v2179_3 : pair1_lt.sl.v2179_3 d L tab k r g1 g2 hR hin h9 = AccMath.accVec (rowF fl tab (wL L).val (2 * t1.val + 1) (2 * k.val + 1)) (offF fl (wL L).val (2 * t1.val + 1) (2 * k.val + 1)) 0 15 := by
        rw [show pair1_lt.sl.v2179_3 d L tab k r g1 g2 hR hin h9 = addf (pair1_lt.sl.v2143_3 d L tab k r g1 g2 hR hin h9) (pair1_lt.sl.v2178_3 d L tab k r g1 g2 hR hin h9) from rfl, a_v2143_3]
        exact acc_step d L fl tab (wL L).val (2 * t1.val + 1) (2 * k.val + 1) 1 _ hRB ⟨14, by decide⟩ ⟨0, by decide⟩ _ rfl _ hw_v2171_3 _ (k1_off107_form ..) _ _
      have a_v2215_3 : pair1_lt.sl.v2215_3 d L tab k r g1 g2 hR hin h9 = AccMath.accVec (rowF fl tab (wL L).val (2 * t1.val + 1) (2 * k.val + 1)) (offF fl (wL L).val (2 * t1.val + 1) (2 * k.val + 1)) 0 16 := by
        rw [show pair1_lt.sl.v2215_3 d L tab k r g1 g2 hR hin h9 = addf (pair1_lt.sl.v2179_3 d L tab k r g1 g2 hR hin h9) (pair1_lt.sl.v2214_3 d L tab k r g1 g2 hR hin h9) from rfl, a_v2179_3]
        exact acc_step d L fl tab (wL L).val (2 * t1.val + 1) (2 * k.val + 1) 1 _ hRB ⟨15, by decide⟩ ⟨0, by decide⟩ _ rfl _ hw_v2207_3 _ (k1_off108_form ..) _ _
      have a_v1675_4 : pair1_lt.sl.v1675_4 d L tab k r g1 g2 hR hin h9 = AccMath.accVec (rowF fl tab (wL L).val (2 * t1.val + 1) (2 * k.val + 1)) (offF fl (wL L).val (2 * t1.val + 1) (2 * k.val + 1)) 0 17 := by
        rw [show pair1_lt.sl.v1675_4 d L tab k r g1 g2 hR hin h9 = addf (pair1_lt.sl.v2215_3 d L tab k r g1 g2 hR hin h9) (pair1_lt.sl.v1674_4 d L tab k r g1 g2 hR hin h9) from rfl, a_v2215_3]
        exact acc_step d L fl tab (wL L).val (2 * t1.val + 1) (2 * k.val + 1) 1 _ hRB ⟨16, by decide⟩ ⟨0, by decide⟩ _ rfl _ hw_v1667_4 _ (k1_off93_form ..) _ _
      have a_v1711_4 : pair1_lt.sl.v1711_4 d L tab k r g1 g2 hR hin h9 = AccMath.accVec (rowF fl tab (wL L).val (2 * t1.val + 1) (2 * k.val + 1)) (offF fl (wL L).val (2 * t1.val + 1) (2 * k.val + 1)) 0 18 := by
        rw [show pair1_lt.sl.v1711_4 d L tab k r g1 g2 hR hin h9 = addf (pair1_lt.sl.v1675_4 d L tab k r g1 g2 hR hin h9) (pair1_lt.sl.v1710_4 d L tab k r g1 g2 hR hin h9) from rfl, a_v1675_4]
        exact acc_step d L fl tab (wL L).val (2 * t1.val + 1) (2 * k.val + 1) 1 _ hRB ⟨17, by decide⟩ ⟨0, by decide⟩ _ rfl _ hw_v1703_4 _ (k1_off94_form ..) _ _
      have a_v1747_4 : pair1_lt.sl.v1747_4 d L tab k r g1 g2 hR hin h9 = AccMath.accVec (rowF fl tab (wL L).val (2 * t1.val + 1) (2 * k.val + 1)) (offF fl (wL L).val (2 * t1.val + 1) (2 * k.val + 1)) 0 19 := by
        rw [show pair1_lt.sl.v1747_4 d L tab k r g1 g2 hR hin h9 = addf (pair1_lt.sl.v1711_4 d L tab k r g1 g2 hR hin h9) (pair1_lt.sl.v1746_4 d L tab k r g1 g2 hR hin h9) from rfl, a_v1711_4]
        exact acc_step d L fl tab (wL L).val (2 * t1.val + 1) (2 * k.val + 1) 1 _ hRB ⟨18, by decide⟩ ⟨0, by decide⟩ _ rfl _ hw_v1739_4 _ (k1_off95_form ..) _ _
      have a_v1783_4 : pair1_lt.sl.v1783_4 d L tab k r g1 g2 hR hin h9 = AccMath.accVec (rowF fl tab (wL L).val (2 * t1.val + 1) (2 * k.val + 1)) (offF fl (wL L).val (2 * t1.val + 1) (2 * k.val + 1)) 0 20 := by
        rw [show pair1_lt.sl.v1783_4 d L tab k r g1 g2 hR hin h9 = addf (pair1_lt.sl.v1747_4 d L tab k r g1 g2 hR hin h9) (pair1_lt.sl.v1782_4 d L tab k r g1 g2 hR hin h9) from rfl, a_v1747_4]
        exact acc_step d L fl tab (wL L).val (2 * t1.val + 1) (2 * k.val + 1) 1 _ hRB ⟨19, by decide⟩ ⟨0, by decide⟩ _ rfl _ hw_v1775_4 _ (k1_off96_form ..) _ _
      have a_v1819_4 : pair1_lt.sl.v1819_4 d L tab k r g1 g2 hR hin h9 = AccMath.accVec (rowF fl tab (wL L).val (2 * t1.val + 1) (2 * k.val + 1)) (offF fl (wL L).val (2 * t1.val + 1) (2 * k.val + 1)) 0 21 := by
        rw [show pair1_lt.sl.v1819_4 d L tab k r g1 g2 hR hin h9 = addf (pair1_lt.sl.v1783_4 d L tab k r g1 g2 hR hin h9) (pair1_lt.sl.v1818_4 d L tab k r g1 g2 hR hin h9) from rfl, a_v1783_4]
        exact acc_step d L fl tab (wL L).val (2 * t1.val + 1) (2 * k.val + 1) 1 _ hRB ⟨20, by decide⟩ ⟨0, by decide⟩ _ rfl _ hw_v1811_4 _ (k1_off97_form ..) _ _
      have a_v1855_4 : pair1_lt.sl.v1855_4 d L tab k r g1 g2 hR hin h9 = AccMath.accVec (rowF fl tab (wL L).val (2 * t1.val + 1) (2 * k.val + 1)) (offF fl (wL L).val (2 * t1.val + 1) (2 * k.val + 1)) 0 22 := by
        rw [show pair1_lt.sl.v1855_4 d L tab k r g1 g2 hR hin h9 = addf (pair1_lt.sl.v1819_4 d L tab k r g1 g2 hR hin h9) (pair1_lt.sl.v1854_4 d L tab k r g1 g2 hR hin h9) from rfl, a_v1819_4]
        exact acc_step d L fl tab (wL L).val (2 * t1.val + 1) (2 * k.val + 1) 1 _ hRB ⟨21, by decide⟩ ⟨0, by decide⟩ _ rfl _ hw_v1847_4 _ (k1_off98_form ..) _ _
      have a_v1891_4 : pair1_lt.sl.v1891_4 d L tab k r g1 g2 hR hin h9 = AccMath.accVec (rowF fl tab (wL L).val (2 * t1.val + 1) (2 * k.val + 1)) (offF fl (wL L).val (2 * t1.val + 1) (2 * k.val + 1)) 0 23 := by
        rw [show pair1_lt.sl.v1891_4 d L tab k r g1 g2 hR hin h9 = addf (pair1_lt.sl.v1855_4 d L tab k r g1 g2 hR hin h9) (pair1_lt.sl.v1890_4 d L tab k r g1 g2 hR hin h9) from rfl, a_v1855_4]
        exact acc_step d L fl tab (wL L).val (2 * t1.val + 1) (2 * k.val + 1) 1 _ hRB ⟨22, by decide⟩ ⟨0, by decide⟩ _ rfl _ hw_v1883_4 _ (k1_off99_form ..) _ _
      have a_v1927_4 : pair1_lt.sl.v1927_4 d L tab k r g1 g2 hR hin h9 = AccMath.accVec (rowF fl tab (wL L).val (2 * t1.val + 1) (2 * k.val + 1)) (offF fl (wL L).val (2 * t1.val + 1) (2 * k.val + 1)) 0 24 := by
        rw [show pair1_lt.sl.v1927_4 d L tab k r g1 g2 hR hin h9 = addf (pair1_lt.sl.v1891_4 d L tab k r g1 g2 hR hin h9) (pair1_lt.sl.v1926_4 d L tab k r g1 g2 hR hin h9) from rfl, a_v1891_4]
        exact acc_step d L fl tab (wL L).val (2 * t1.val + 1) (2 * k.val + 1) 1 _ hRB ⟨23, by decide⟩ ⟨0, by decide⟩ _ rfl _ hw_v1919_4 _ (k1_off100_form ..) _ _
      have a_v1963_4 : pair1_lt.sl.v1963_4 d L tab k r g1 g2 hR hin h9 = AccMath.accVec (rowF fl tab (wL L).val (2 * t1.val + 1) (2 * k.val + 1)) (offF fl (wL L).val (2 * t1.val + 1) (2 * k.val + 1)) 0 25 := by
        rw [show pair1_lt.sl.v1963_4 d L tab k r g1 g2 hR hin h9 = addf (pair1_lt.sl.v1927_4 d L tab k r g1 g2 hR hin h9) (pair1_lt.sl.v1962_4 d L tab k r g1 g2 hR hin h9) from rfl, a_v1927_4]
        exact acc_step d L fl tab (wL L).val (2 * t1.val + 1) (2 * k.val + 1) 1 _ hRB ⟨24, by decide⟩ ⟨0, by decide⟩ _ rfl _ hw_v1955_4 _ (k1_off101_form ..) _ _
      have a_v1999_4 : pair1_lt.sl.v1999_4 d L tab k r g1 g2 hR hin h9 = AccMath.accVec (rowF fl tab (wL L).val (2 * t1.val + 1) (2 * k.val + 1)) (offF fl (wL L).val (2 * t1.val + 1) (2 * k.val + 1)) 0 26 := by
        rw [show pair1_lt.sl.v1999_4 d L tab k r g1 g2 hR hin h9 = addf (pair1_lt.sl.v1963_4 d L tab k r g1 g2 hR hin h9) (pair1_lt.sl.v1998_4 d L tab k r g1 g2 hR hin h9) from rfl, a_v1963_4]
        exact acc_step d L fl tab (wL L).val (2 * t1.val + 1) (2 * k.val + 1) 1 _ hRB ⟨25, by decide⟩ ⟨0, by decide⟩ _ rfl _ hw_v1991_4 _ (k1_off102_form ..) _ _
      have a_v2035_4 : pair1_lt.sl.v2035_4 d L tab k r g1 g2 hR hin h9 = AccMath.accVec (rowF fl tab (wL L).val (2 * t1.val + 1) (2 * k.val + 1)) (offF fl (wL L).val (2 * t1.val + 1) (2 * k.val + 1)) 0 27 := by
        rw [show pair1_lt.sl.v2035_4 d L tab k r g1 g2 hR hin h9 = addf (pair1_lt.sl.v1999_4 d L tab k r g1 g2 hR hin h9) (pair1_lt.sl.v2034_4 d L tab k r g1 g2 hR hin h9) from rfl, a_v1999_4]
        exact acc_step d L fl tab (wL L).val (2 * t1.val + 1) (2 * k.val + 1) 1 _ hRB ⟨26, by decide⟩ ⟨0, by decide⟩ _ rfl _ hw_v2027_4 _ (k1_off103_form ..) _ _
      have a_v2071_4 : pair1_lt.sl.v2071_4 d L tab k r g1 g2 hR hin h9 = AccMath.accVec (rowF fl tab (wL L).val (2 * t1.val + 1) (2 * k.val + 1)) (offF fl (wL L).val (2 * t1.val + 1) (2 * k.val + 1)) 0 28 := by
        rw [show pair1_lt.sl.v2071_4 d L tab k r g1 g2 hR hin h9 = addf (pair1_lt.sl.v2035_4 d L tab k r g1 g2 hR hin h9) (pair1_lt.sl.v2070_4 d L tab k r g1 g2 hR hin h9) from rfl, a_v2035_4]
        exact acc_step d L fl tab (wL L).val (2 * t1.val + 1) (2 * k.val + 1) 1 _ hRB ⟨27, by decide⟩ ⟨0, by decide⟩ _ rfl _ hw_v2063_4 _ (k1_off104_form ..) _ _
      have a_v2107_4 : pair1_lt.sl.v2107_4 d L tab k r g1 g2 hR hin h9 = AccMath.accVec (rowF fl tab (wL L).val (2 * t1.val + 1) (2 * k.val + 1)) (offF fl (wL L).val (2 * t1.val + 1) (2 * k.val + 1)) 0 29 := by
        rw [show pair1_lt.sl.v2107_4 d L tab k r g1 g2 hR hin h9 = addf (pair1_lt.sl.v2071_4 d L tab k r g1 g2 hR hin h9) (pair1_lt.sl.v2106_4 d L tab k r g1 g2 hR hin h9) from rfl, a_v2071_4]
        exact acc_step d L fl tab (wL L).val (2 * t1.val + 1) (2 * k.val + 1) 1 _ hRB ⟨28, by decide⟩ ⟨0, by decide⟩ _ rfl _ hw_v2099_4 _ (k1_off105_form ..) _ _
      have a_v2143_4 : pair1_lt.sl.v2143_4 d L tab k r g1 g2 hR hin h9 = AccMath.accVec (rowF fl tab (wL L).val (2 * t1.val + 1) (2 * k.val + 1)) (offF fl (wL L).val (2 * t1.val + 1) (2 * k.val + 1)) 0 30 := by
        rw [show pair1_lt.sl.v2143_4 d L tab k r g1 g2 hR hin h9 = addf (pair1_lt.sl.v2107_4 d L tab k r g1 g2 hR hin h9) (pair1_lt.sl.v2142_4 d L tab k r g1 g2 hR hin h9) from rfl, a_v2107_4]
        exact acc_step d L fl tab (wL L).val (2 * t1.val + 1) (2 * k.val + 1) 1 _ hRB ⟨29, by decide⟩ ⟨0, by decide⟩ _ rfl _ hw_v2135_4 _ (k1_off106_form ..) _ _
      have a_v2179_4 : pair1_lt.sl.v2179_4 d L tab k r g1 g2 hR hin h9 = AccMath.accVec (rowF fl tab (wL L).val (2 * t1.val + 1) (2 * k.val + 1)) (offF fl (wL L).val (2 * t1.val + 1) (2 * k.val + 1)) 0 31 := by
        rw [show pair1_lt.sl.v2179_4 d L tab k r g1 g2 hR hin h9 = addf (pair1_lt.sl.v2143_4 d L tab k r g1 g2 hR hin h9) (pair1_lt.sl.v2178_4 d L tab k r g1 g2 hR hin h9) from rfl, a_v2143_4]
        exact acc_step d L fl tab (wL L).val (2 * t1.val + 1) (2 * k.val + 1) 1 _ hRB ⟨30, by decide⟩ ⟨0, by decide⟩ _ rfl _ hw_v2171_4 _ (k1_off107_form ..) _ _
      have a_v2215_4 : pair1_lt.sl.v2215_4 d L tab k r g1 g2 hR hin h9 = AccMath.accVec (rowF fl tab (wL L).val (2 * t1.val + 1) (2 * k.val + 1)) (offF fl (wL L).val (2 * t1.val + 1) (2 * k.val + 1)) 0 32 := by
        rw [show pair1_lt.sl.v2215_4 d L tab k r g1 g2 hR hin h9 = addf (pair1_lt.sl.v2179_4 d L tab k r g1 g2 hR hin h9) (pair1_lt.sl.v2214_4 d L tab k r g1 g2 hR hin h9) from rfl, a_v2179_4]
        exact acc_step d L fl tab (wL L).val (2 * t1.val + 1) (2 * k.val + 1) 1 _ hRB ⟨31, by decide⟩ ⟨0, by decide⟩ _ rfl _ hw_v2207_4 _ (k1_off108_form ..) _ _
      have a_v1675_5 : pair1_lt.sl.v1675_5 d L tab k r g1 g2 hR hin h9 = AccMath.accVec (rowF fl tab (wL L).val (2 * t1.val + 1) (2 * k.val + 1)) (offF fl (wL L).val (2 * t1.val + 1) (2 * k.val + 1)) 0 33 := by
        rw [show pair1_lt.sl.v1675_5 d L tab k r g1 g2 hR hin h9 = addf (pair1_lt.sl.v2215_4 d L tab k r g1 g2 hR hin h9) (pair1_lt.sl.v1674_5 d L tab k r g1 g2 hR hin h9) from rfl, a_v2215_4]
        exact acc_step d L fl tab (wL L).val (2 * t1.val + 1) (2 * k.val + 1) 1 _ hRB ⟨32, by decide⟩ ⟨0, by decide⟩ _ rfl _ hw_v1667_5 _ (k1_off93_form ..) _ _
      have a_v1711_5 : pair1_lt.sl.v1711_5 d L tab k r g1 g2 hR hin h9 = AccMath.accVec (rowF fl tab (wL L).val (2 * t1.val + 1) (2 * k.val + 1)) (offF fl (wL L).val (2 * t1.val + 1) (2 * k.val + 1)) 0 34 := by
        rw [show pair1_lt.sl.v1711_5 d L tab k r g1 g2 hR hin h9 = addf (pair1_lt.sl.v1675_5 d L tab k r g1 g2 hR hin h9) (pair1_lt.sl.v1710_5 d L tab k r g1 g2 hR hin h9) from rfl, a_v1675_5]
        exact acc_step d L fl tab (wL L).val (2 * t1.val + 1) (2 * k.val + 1) 1 _ hRB ⟨33, by decide⟩ ⟨0, by decide⟩ _ rfl _ hw_v1703_5 _ (k1_off94_form ..) _ _
      have a_v1747_5 : pair1_lt.sl.v1747_5 d L tab k r g1 g2 hR hin h9 = AccMath.accVec (rowF fl tab (wL L).val (2 * t1.val + 1) (2 * k.val + 1)) (offF fl (wL L).val (2 * t1.val + 1) (2 * k.val + 1)) 0 35 := by
        rw [show pair1_lt.sl.v1747_5 d L tab k r g1 g2 hR hin h9 = addf (pair1_lt.sl.v1711_5 d L tab k r g1 g2 hR hin h9) (pair1_lt.sl.v1746_5 d L tab k r g1 g2 hR hin h9) from rfl, a_v1711_5]
        exact acc_step d L fl tab (wL L).val (2 * t1.val + 1) (2 * k.val + 1) 1 _ hRB ⟨34, by decide⟩ ⟨0, by decide⟩ _ rfl _ hw_v1739_5 _ (k1_off95_form ..) _ _
      have a_v1783_5 : pair1_lt.sl.v1783_5 d L tab k r g1 g2 hR hin h9 = AccMath.accVec (rowF fl tab (wL L).val (2 * t1.val + 1) (2 * k.val + 1)) (offF fl (wL L).val (2 * t1.val + 1) (2 * k.val + 1)) 0 36 := by
        rw [show pair1_lt.sl.v1783_5 d L tab k r g1 g2 hR hin h9 = addf (pair1_lt.sl.v1747_5 d L tab k r g1 g2 hR hin h9) (pair1_lt.sl.v1782_5 d L tab k r g1 g2 hR hin h9) from rfl, a_v1747_5]
        exact acc_step d L fl tab (wL L).val (2 * t1.val + 1) (2 * k.val + 1) 1 _ hRB ⟨35, by decide⟩ ⟨0, by decide⟩ _ rfl _ hw_v1775_5 _ (k1_off96_form ..) _ _
      have a_v1819_5 : pair1_lt.sl.v1819_5 d L tab k r g1 g2 hR hin h9 = AccMath.accVec (rowF fl tab (wL L).val (2 * t1.val + 1) (2 * k.val + 1)) (offF fl (wL L).val (2 * t1.val + 1) (2 * k.val + 1)) 0 37 := by
        rw [show pair1_lt.sl.v1819_5 d L tab k r g1 g2 hR hin h9 = addf (pair1_lt.sl.v1783_5 d L tab k r g1 g2 hR hin h9) (pair1_lt.sl.v1818_5 d L tab k r g1 g2 hR hin h9) from rfl, a_v1783_5]
        exact acc_step d L fl tab (wL L).val (2 * t1.val + 1) (2 * k.val + 1) 1 _ hRB ⟨36, by decide⟩ ⟨0, by decide⟩ _ rfl _ hw_v1811_5 _ (k1_off97_form ..) _ _
      have a_v1855_5 : pair1_lt.sl.v1855_5 d L tab k r g1 g2 hR hin h9 = AccMath.accVec (rowF fl tab (wL L).val (2 * t1.val + 1) (2 * k.val + 1)) (offF fl (wL L).val (2 * t1.val + 1) (2 * k.val + 1)) 0 38 := by
        rw [show pair1_lt.sl.v1855_5 d L tab k r g1 g2 hR hin h9 = addf (pair1_lt.sl.v1819_5 d L tab k r g1 g2 hR hin h9) (pair1_lt.sl.v1854_5 d L tab k r g1 g2 hR hin h9) from rfl, a_v1819_5]
        exact acc_step d L fl tab (wL L).val (2 * t1.val + 1) (2 * k.val + 1) 1 _ hRB ⟨37, by decide⟩ ⟨0, by decide⟩ _ rfl _ hw_v1847_5 _ (k1_off98_form ..) _ _
      have a_v1891_5 : pair1_lt.sl.v1891_5 d L tab k r g1 g2 hR hin h9 = AccMath.accVec (rowF fl tab (wL L).val (2 * t1.val + 1) (2 * k.val + 1)) (offF fl (wL L).val (2 * t1.val + 1) (2 * k.val + 1)) 0 39 := by
        rw [show pair1_lt.sl.v1891_5 d L tab k r g1 g2 hR hin h9 = addf (pair1_lt.sl.v1855_5 d L tab k r g1 g2 hR hin h9) (pair1_lt.sl.v1890_5 d L tab k r g1 g2 hR hin h9) from rfl, a_v1855_5]
        exact acc_step d L fl tab (wL L).val (2 * t1.val + 1) (2 * k.val + 1) 1 _ hRB ⟨38, by decide⟩ ⟨0, by decide⟩ _ rfl _ hw_v1883_5 _ (k1_off99_form ..) _ _
      have a_v1927_5 : pair1_lt.sl.v1927_5 d L tab k r g1 g2 hR hin h9 = AccMath.accVec (rowF fl tab (wL L).val (2 * t1.val + 1) (2 * k.val + 1)) (offF fl (wL L).val (2 * t1.val + 1) (2 * k.val + 1)) 0 40 := by
        rw [show pair1_lt.sl.v1927_5 d L tab k r g1 g2 hR hin h9 = addf (pair1_lt.sl.v1891_5 d L tab k r g1 g2 hR hin h9) (pair1_lt.sl.v1926_5 d L tab k r g1 g2 hR hin h9) from rfl, a_v1891_5]
        exact acc_step d L fl tab (wL L).val (2 * t1.val + 1) (2 * k.val + 1) 1 _ hRB ⟨39, by decide⟩ ⟨0, by decide⟩ _ rfl _ hw_v1919_5 _ (k1_off100_form ..) _ _
      have a_v1963_5 : pair1_lt.sl.v1963_5 d L tab k r g1 g2 hR hin h9 = AccMath.accVec (rowF fl tab (wL L).val (2 * t1.val + 1) (2 * k.val + 1)) (offF fl (wL L).val (2 * t1.val + 1) (2 * k.val + 1)) 0 41 := by
        rw [show pair1_lt.sl.v1963_5 d L tab k r g1 g2 hR hin h9 = addf (pair1_lt.sl.v1927_5 d L tab k r g1 g2 hR hin h9) (pair1_lt.sl.v1962_5 d L tab k r g1 g2 hR hin h9) from rfl, a_v1927_5]
        exact acc_step d L fl tab (wL L).val (2 * t1.val + 1) (2 * k.val + 1) 1 _ hRB ⟨40, by decide⟩ ⟨0, by decide⟩ _ rfl _ hw_v1955_5 _ (k1_off101_form ..) _ _
      have a_v1999_5 : pair1_lt.sl.v1999_5 d L tab k r g1 g2 hR hin h9 = AccMath.accVec (rowF fl tab (wL L).val (2 * t1.val + 1) (2 * k.val + 1)) (offF fl (wL L).val (2 * t1.val + 1) (2 * k.val + 1)) 0 42 := by
        rw [show pair1_lt.sl.v1999_5 d L tab k r g1 g2 hR hin h9 = addf (pair1_lt.sl.v1963_5 d L tab k r g1 g2 hR hin h9) (pair1_lt.sl.v1998_5 d L tab k r g1 g2 hR hin h9) from rfl, a_v1963_5]
        exact acc_step d L fl tab (wL L).val (2 * t1.val + 1) (2 * k.val + 1) 1 _ hRB ⟨41, by decide⟩ ⟨0, by decide⟩ _ rfl _ hw_v1991_5 _ (k1_off102_form ..) _ _
      have a_v2035_5 : pair1_lt.sl.v2035_5 d L tab k r g1 g2 hR hin h9 = AccMath.accVec (rowF fl tab (wL L).val (2 * t1.val + 1) (2 * k.val + 1)) (offF fl (wL L).val (2 * t1.val + 1) (2 * k.val + 1)) 0 43 := by
        rw [show pair1_lt.sl.v2035_5 d L tab k r g1 g2 hR hin h9 = addf (pair1_lt.sl.v1999_5 d L tab k r g1 g2 hR hin h9) (pair1_lt.sl.v2034_5 d L tab k r g1 g2 hR hin h9) from rfl, a_v1999_5]
        exact acc_step d L fl tab (wL L).val (2 * t1.val + 1) (2 * k.val + 1) 1 _ hRB ⟨42, by decide⟩ ⟨0, by decide⟩ _ rfl _ hw_v2027_5 _ (k1_off103_form ..) _ _
      have a_v2071_5 : pair1_lt.sl.v2071_5 d L tab k r g1 g2 hR hin h9 = AccMath.accVec (rowF fl tab (wL L).val (2 * t1.val + 1) (2 * k.val + 1)) (offF fl (wL L).val (2 * t1.val + 1) (2 * k.val + 1)) 0 44 := by
        rw [show pair1_lt.sl.v2071_5 d L tab k r g1 g2 hR hin h9 = addf (pair1_lt.sl.v2035_5 d L tab k r g1 g2 hR hin h9) (pair1_lt.sl.v2070_5 d L tab k r g1 g2 hR hin h9) from rfl, a_v2035_5]
        exact acc_step d L fl tab (wL L).val (2 * t1.val + 1) (2 * k.val + 1) 1 _ hRB ⟨43, by decide⟩ ⟨0, by decide⟩ _ rfl _ hw_v2063_5 _ (k1_off104_form ..) _ _
      have a_v2107_5 : pair1_lt.sl.v2107_5 d L tab k r g1 g2 hR hin h9 = AccMath.accVec (rowF fl tab (wL L).val (2 * t1.val + 1) (2 * k.val + 1)) (offF fl (wL L).val (2 * t1.val + 1) (2 * k.val + 1)) 0 45 := by
        rw [show pair1_lt.sl.v2107_5 d L tab k r g1 g2 hR hin h9 = addf (pair1_lt.sl.v2071_5 d L tab k r g1 g2 hR hin h9) (pair1_lt.sl.v2106_5 d L tab k r g1 g2 hR hin h9) from rfl, a_v2071_5]
        exact acc_step d L fl tab (wL L).val (2 * t1.val + 1) (2 * k.val + 1) 1 _ hRB ⟨44, by decide⟩ ⟨0, by decide⟩ _ rfl _ hw_v2099_5 _ (k1_off105_form ..) _ _
      have a_v2143_5 : pair1_lt.sl.v2143_5 d L tab k r g1 g2 hR hin h9 = AccMath.accVec (rowF fl tab (wL L).val (2 * t1.val + 1) (2 * k.val + 1)) (offF fl (wL L).val (2 * t1.val + 1) (2 * k.val + 1)) 0 46 := by
        rw [show pair1_lt.sl.v2143_5 d L tab k r g1 g2 hR hin h9 = addf (pair1_lt.sl.v2107_5 d L tab k r g1 g2 hR hin h9) (pair1_lt.sl.v2142_5 d L tab k r g1 g2 hR hin h9) from rfl, a_v2107_5]
        exact acc_step d L fl tab (wL L).val (2 * t1.val + 1) (2 * k.val + 1) 1 _ hRB ⟨45, by decide⟩ ⟨0, by decide⟩ _ rfl _ hw_v2135_5 _ (k1_off106_form ..) _ _
      have a_v2179_5 : pair1_lt.sl.v2179_5 d L tab k r g1 g2 hR hin h9 = AccMath.accVec (rowF fl tab (wL L).val (2 * t1.val + 1) (2 * k.val + 1)) (offF fl (wL L).val (2 * t1.val + 1) (2 * k.val + 1)) 0 47 := by
        rw [show pair1_lt.sl.v2179_5 d L tab k r g1 g2 hR hin h9 = addf (pair1_lt.sl.v2143_5 d L tab k r g1 g2 hR hin h9) (pair1_lt.sl.v2178_5 d L tab k r g1 g2 hR hin h9) from rfl, a_v2143_5]
        exact acc_step d L fl tab (wL L).val (2 * t1.val + 1) (2 * k.val + 1) 1 _ hRB ⟨46, by decide⟩ ⟨0, by decide⟩ _ rfl _ hw_v2171_5 _ (k1_off107_form ..) _ _
      have a_v2215_5 : pair1_lt.sl.v2215_5 d L tab k r g1 g2 hR hin h9 = AccMath.accVec (rowF fl tab (wL L).val (2 * t1.val + 1) (2 * k.val + 1)) (offF fl (wL L).val (2 * t1.val + 1) (2 * k.val + 1)) 0 48 := by
        rw [show pair1_lt.sl.v2215_5 d L tab k r g1 g2 hR hin h9 = addf (pair1_lt.sl.v2179_5 d L tab k r g1 g2 hR hin h9) (pair1_lt.sl.v2214_5 d L tab k r g1 g2 hR hin h9) from rfl, a_v2179_5]
        exact acc_step d L fl tab (wL L).val (2 * t1.val + 1) (2 * k.val + 1) 1 _ hRB ⟨47, by decide⟩ ⟨0, by decide⟩ _ rfl _ hw_v2207_5 _ (k1_off108_form ..) _ _
      have a_v1580 : pair1_lt.sl.v1580 d L tab k r g1 g2 hR hin h9 = AccMath.accVec (rowF fl tab (wL L).val (2 * t1.val + 1) (2 * k.val + 1)) (offF fl (wL L).val (2 * t1.val + 1) (2 * k.val + 1)) 0 49 := by
        rw [show pair1_lt.sl.v1580 d L tab k r g1 g2 hR hin h9 = addf (pair1_lt.sl.v2215_5 d L tab k r g1 g2 hR hin h9) (pair1_lt.sl.v1579 d L tab k r g1 g2 hR hin h9) from rfl, a_v2215_5]
        exact acc_step d L fl tab (wL L).val (2 * t1.val + 1) (2 * k.val + 1) 1 _ hRB ⟨48, by decide⟩ ⟨0, by decide⟩ _ rfl _ hw_v1572 _ (k1_off110_form ..) _ _
      have a_v1614 : pair1_lt.sl.v1614 d L tab k r g1 g2 hR hin h9 = AccMath.accVec (rowF fl tab (wL L).val (2 * t1.val + 1) (2 * k.val + 1)) (offF fl (wL L).val (2 * t1.val + 1) (2 * k.val + 1)) 0 50 := by
        rw [show pair1_lt.sl.v1614 d L tab k r g1 g2 hR hin h9 = addf (pair1_lt.sl.v1580 d L tab k r g1 g2 hR hin h9) (pair1_lt.sl.v1613 d L tab k r g1 g2 hR hin h9) from rfl, a_v1580]
        exact acc_step d L fl tab (wL L).val (2 * t1.val + 1) (2 * k.val + 1) 1 _ hRB ⟨49, by decide⟩ ⟨0, by decide⟩ _ rfl _ hw_v1606 _ (k1_off111_form ..) _ _
      have a_v1561_B1 : pair1_lt.sl.v1561 = AccMath.accVec (rowF fl tab (wL L).val (2 * t1.val + 1) (2 * k.val + 1)) (offF fl (wL L).val (2 * t1.val + 1) (2 * k.val + 1)) 1 0 := acc_zero fl tab (wL L).val (2 * t1.val + 1) (2 * k.val + 1) 1
      have a_v1683_3 : pair1_lt.sl.v1683_3 d L tab k r g1 g2 hR hin h9 = AccMath.accVec (rowF fl tab (wL L).val (2 * t1.val + 1) (2 * k.val + 1)) (offF fl (wL L).val (2 * t1.val + 1) (2 * k.val + 1)) 1 1 := by
        rw [show pair1_lt.sl.v1683_3 d L tab k r g1 g2 hR hin h9 = addf (pair1_lt.sl.v1561) (pair1_lt.sl.v1682_3 d L tab k r g1 g2 hR hin h9) from rfl, a_v1561_B1]
        exact acc_step d L fl tab (wL L).val (2 * t1.val + 1) (2 * k.val + 1) 1 _ hRB ⟨0, by decide⟩ ⟨1, by decide⟩ _ rfl _ hw_v1667_3 _ (k1_off93_form ..) _ _
      have a_v1719_3 : pair1_lt.sl.v1719_3 d L tab k r g1 g2 hR hin h9 = AccMath.accVec (rowF fl tab (wL L).val (2 * t1.val + 1) (2 * k.val + 1)) (offF fl (wL L).val (2 * t1.val + 1) (2 * k.val + 1)) 1 2 := by
        rw [show pair1_lt.sl.v1719_3 d L tab k r g1 g2 hR hin h9 = addf (pair1_lt.sl.v1683_3 d L tab k r g1 g2 hR hin h9) (pair1_lt.sl.v1718_3 d L tab k r g1 g2 hR hin h9) from rfl, a_v1683_3]
        exact acc_step d L fl tab (wL L).val (2 * t1.val + 1) (2 * k.val + 1) 1 _ hRB ⟨1, by decide⟩ ⟨1, by decide⟩ _ rfl _ hw_v1703_3 _ (k1_off94_form ..) _ _
      have a_v1755_3 : pair1_lt.sl.v1755_3 d L tab k r g1 g2 hR hin h9 = AccMath.accVec (rowF fl tab (wL L).val (2 * t1.val + 1) (2 * k.val + 1)) (offF fl (wL L).val (2 * t1.val + 1) (2 * k.val + 1)) 1 3 := by
        rw [show pair1_lt.sl.v1755_3 d L tab k r g1 g2 hR hin h9 = addf (pair1_lt.sl.v1719_3 d L tab k r g1 g2 hR hin h9) (pair1_lt.sl.v1754_3 d L tab k r g1 g2 hR hin h9) from rfl, a_v1719_3]
        exact acc_step d L fl tab (wL L).val (2 * t1.val + 1) (2 * k.val + 1) 1 _ hRB ⟨2, by decide⟩ ⟨1, by decide⟩ _ rfl _ hw_v1739_3 _ (k1_off95_form ..) _ _
      have a_v1791_3 : pair1_lt.sl.v1791_3 d L tab k r g1 g2 hR hin h9 = AccMath.accVec (rowF fl tab (wL L).val (2 * t1.val + 1) (2 * k.val + 1)) (offF fl (wL L).val (2 * t1.val + 1) (2 * k.val + 1)) 1 4 := by
        rw [show pair1_lt.sl.v1791_3 d L tab k r g1 g2 hR hin h9 = addf (pair1_lt.sl.v1755_3 d L tab k r g1 g2 hR hin h9) (pair1_lt.sl.v1790_3 d L tab k r g1 g2 hR hin h9) from rfl, a_v1755_3]
        exact acc_step d L fl tab (wL L).val (2 * t1.val + 1) (2 * k.val + 1) 1 _ hRB ⟨3, by decide⟩ ⟨1, by decide⟩ _ rfl _ hw_v1775_3 _ (k1_off96_form ..) _ _
      have a_v1827_3 : pair1_lt.sl.v1827_3 d L tab k r g1 g2 hR hin h9 = AccMath.accVec (rowF fl tab (wL L).val (2 * t1.val + 1) (2 * k.val + 1)) (offF fl (wL L).val (2 * t1.val + 1) (2 * k.val + 1)) 1 5 := by
        rw [show pair1_lt.sl.v1827_3 d L tab k r g1 g2 hR hin h9 = addf (pair1_lt.sl.v1791_3 d L tab k r g1 g2 hR hin h9) (pair1_lt.sl.v1826_3 d L tab k r g1 g2 hR hin h9) from rfl, a_v1791_3]
        exact acc_step d L fl tab (wL L).val (2 * t1.val + 1) (2 * k.val + 1) 1 _ hRB ⟨4, by decide⟩ ⟨1, by decide⟩ _ rfl _ hw_v1811_3 _ (k1_off97_form ..) _ _
      have a_v1863_3 : pair1_lt.sl.v1863_3 d L tab k r g1 g2 hR hin h9 = AccMath.accVec (rowF fl tab (wL L).val (2 * t1.val + 1) (2 * k.val + 1)) (offF fl (wL L).val (2 * t1.val + 1) (2 * k.val + 1)) 1 6 := by
        rw [show pair1_lt.sl.v1863_3 d L tab k r g1 g2 hR hin h9 = addf (pair1_lt.sl.v1827_3 d L tab k r g1 g2 hR hin h9) (pair1_lt.sl.v1862_3 d L tab k r g1 g2 hR hin h9) from rfl, a_v1827_3]
        exact acc_step d L fl tab (wL L).val (2 * t1.val + 1) (2 * k.val + 1) 1 _ hRB ⟨5, by decide⟩ ⟨1, by decide⟩ _ rfl _ hw_v1847_3 _ (k1_off98_form ..) _ _
      have a_v1899_3 : pair1_lt.sl.v1899_3 d L tab k r g1 g2 hR hin h9 = AccMath.accVec (rowF fl tab (wL L).val (2 * t1.val + 1) (2 * k.val + 1)) (offF fl (wL L).val (2 * t1.val + 1) (2 * k.val + 1)) 1 7 := by
        rw [show pair1_lt.sl.v1899_3 d L tab k r g1 g2 hR hin h9 = addf (pair1_lt.sl.v1863_3 d L tab k r g1 g2 hR hin h9) (pair1_lt.sl.v1898_3 d L tab k r g1 g2 hR hin h9) from rfl, a_v1863_3]
        exact acc_step d L fl tab (wL L).val (2 * t1.val + 1) (2 * k.val + 1) 1 _ hRB ⟨6, by decide⟩ ⟨1, by decide⟩ _ rfl _ hw_v1883_3 _ (k1_off99_form ..) _ _
      have a_v1935_3 : pair1_lt.sl.v1935_3 d L tab k r g1 g2 hR hin h9 = AccMath.accVec (rowF fl tab (wL L).val (2 * t1.val + 1) (2 * k.val + 1)) (offF fl (wL L).val (2 * t1.val + 1) (2 * k.val + 1)) 1 8 := by
        rw [show pair1_lt.sl.v1935_3 d L tab k r g1 g2 hR hin h9 = addf (pair1_lt.sl.v1899_3 d L tab k r g1 g2 hR hin h9) (pair1_lt.sl.v1934_3 d L tab k r g1 g2 hR hin h9) from rfl, a_v1899_3]
        exact acc_step d L fl tab (wL L).val (2 * t1.val + 1) (2 * k.val + 1) 1 _ hRB ⟨7, by decide⟩ ⟨1, by decide⟩ _ rfl _ hw_v1919_3 _ (k1_off100_form ..) _ _
      have a_v1971_3 : pair1_lt.sl.v1971_3 d L tab k r g1 g2 hR hin h9 = AccMath.accVec (rowF fl tab (wL L).val (2 * t1.val + 1) (2 * k.val + 1)) (offF fl (wL L).val (2 * t1.val + 1) (2 * k.val + 1)) 1 9 := by
        rw [show pair1_lt.sl.v1971_3 d L tab k r g1 g2 hR hin h9 = addf (pair1_lt.sl.v1935_3 d L tab k r g1 g2 hR hin h9) (pair1_lt.sl.v1970_3 d L tab k r g1 g2 hR hin h9) from rfl, a_v1935_3]
        exact acc_step d L fl tab (wL L).val (2 * t1.val + 1) (2 * k.val + 1) 1 _ hRB ⟨8, by decide⟩ ⟨1, by decide⟩ _ rfl _ hw_v1955_3 _ (k1_off101_form ..) _ _
      have a_v2007_3 : pair1_lt.sl.v2007_3 d L tab k r g1 g2 hR hin h9 = AccMath.accVec (rowF fl tab (wL L).val (2 * t1.val + 1) (2 * k.val + 1)) (offF fl (wL L).val (2 * t1.val + 1) (2 * k.val + 1)) 1 10 := by
        rw [show pair1_lt.sl.v2007_3 d L tab k r g1 g2 hR hin h9 = addf (pair1_lt.sl.v1971_3 d L tab k r g1 g2 hR hin h9) (pair1_lt.sl.v2006_3 d L tab k r g1 g2 hR hin h9) from rfl, a_v1971_3]
        exact acc_step d L fl tab (wL L).val (2 * t1.val + 1) (2 * k.val + 1) 1 _ hRB ⟨9, by decide⟩ ⟨1, by decide⟩ _ rfl _ hw_v1991_3 _ (k1_off102_form ..) _ _
      have a_v2043_3 : pair1_lt.sl.v2043_3 d L tab k r g1 g2 hR hin h9 = AccMath.accVec (rowF fl tab (wL L).val (2 * t1.val + 1) (2 * k.val + 1)) (offF fl (wL L).val (2 * t1.val + 1) (2 * k.val + 1)) 1 11 := by
        rw [show pair1_lt.sl.v2043_3 d L tab k r g1 g2 hR hin h9 = addf (pair1_lt.sl.v2007_3 d L tab k r g1 g2 hR hin h9) (pair1_lt.sl.v2042_3 d L tab k r g1 g2 hR hin h9) from rfl, a_v2007_3]
        exact acc_step d L fl tab (wL L).val (2 * t1.val + 1) (2 * k.val + 1) 1 _ hRB ⟨10, by decide⟩ ⟨1, by decide⟩ _ rfl _ hw_v2027_3 _ (k1_off103_form ..) _ _
      have a_v2079_3 : pair1_lt.sl.v2079_3 d L tab k r g1 g2 hR hin h9 = AccMath.accVec (rowF fl tab (wL L).val (2 * t1.val + 1) (2 * k.val + 1)) (offF fl (wL L).val (2 * t1.val + 1) (2 * k.val + 1)) 1 12 := by
        rw [show pair1_lt.sl.v2079_3 d L tab k r g1 g2 hR hin h9 = addf (pair1_lt.sl.v2043_3 d L tab k r g1 g2 hR hin h9) (pair1_lt.sl.v2078_3 d L tab k r g1 g2 hR hin h9) from rfl, a_v2043_3]
        exact acc_step d L fl tab (wL L).val (2 * t1.val + 1) (2 * k.val + 1) 1 _ hRB ⟨11, by decide⟩ ⟨1, by decide⟩ _ rfl _ hw_v2063_3 _ (k1_off104_form ..) _ _
      have a_v2115_3 : pair1_lt.sl.v2115_3 d L tab k r g1 g2 hR hin h9 = AccMath.accVec (rowF fl tab (wL L).val (2 * t1.val + 1) (2 * k.val + 1)) (offF fl (wL L).val (2 * t1.val + 1) (2 * k.val + 1)) 1 13 := by
        rw [show pair1_lt.sl.v2115_3 d L tab k r g1 g2 hR hin h9 = addf (pair1_lt.sl.v2079_3 d L tab k r g1 g2 hR hin h9) (pair1_lt.sl.v2114_3 d L tab k r g1 g2 hR hin h9) from rfl, a_v2079_3]
        exact acc_step d L fl tab (wL L).val (2 * t1.val + 1) (2 * k.val + 1) 1 _ hRB ⟨12, by decide⟩ ⟨1, by decide⟩ _ rfl _ hw_v2099_3 _ (k1_off105_form ..) _ _
      have a_v2151_3 : pair1_lt.sl.v2151_3 d L tab k r g1 g2 hR hin h9 = AccMath.accVec (rowF fl tab (wL L).val (2 * t1.val + 1) (2 * k.val + 1)) (offF fl (wL L).val (2 * t1.val + 1) (2 * k.val + 1)) 1 14 := by
        rw [show pair1_lt.sl.v2151_3 d L tab k r g1 g2 hR hin h9 = addf (pair1_lt.sl.v2115_3 d L tab k r g1 g2 hR hin h9) (pair1_lt.sl.v2150_3 d L tab k r g1 g2 hR hin h9) from rfl, a_v2115_3]
        exact acc_step d L fl tab (wL L).val (2 * t1.val + 1) (2 * k.val + 1) 1 _ hRB ⟨13, by decide⟩ ⟨1, by decide⟩ _ rfl _ hw_v2135_3 _ (k1_off106_form ..) _ _
      have a_v2187_3 : pair1_lt.sl.v2187_3 d L tab k r g1 g2 hR hin h9 = AccMath.accVec (rowF fl tab (wL L).val (2 * t1.val + 1) (2 * k.val + 1)) (offF fl (wL L).val (2 * t1.val + 1) (2 * k.val + 1)) 1 15 := by
        rw [show pair1_lt.sl.v2187_3 d L tab k r g1 g2 hR hin h9 = addf (pair1_lt.sl.v2151_3 d L tab k r g1 g2 hR hin h9) (pair1_lt.sl.v2186_3 d L tab k r g1 g2 hR hin h9) from rfl, a_v2151_3]
        exact acc_step d L fl tab (wL L).val (2 * t1.val + 1) (2 * k.val + 1) 1 _ hRB ⟨14, by decide⟩ ⟨1, by decide⟩ _ rfl _ hw_v2171_3 _ (k1_off107_form ..) _ _
      have a_v2223_3 : pair1_lt.sl.v2223_3 d L tab k r g1 g2 hR hin h9 = AccMath.accVec (rowF fl tab (wL L).val (2 * t1.val + 1) (2 * k.val + 1)) (offF fl (wL L).val (2 * t1.val + 1) (2 * k.val + 1)) 1 16 := by
        rw [show pair1_lt.sl.v2223_3 d L tab k r g1 g2 hR hin h9 = addf (pair1_lt.sl.v2187_3 d L tab k r g1 g2 hR hin h9) (pair1_lt.sl.v2222_3 d L tab k r g1 g2 hR hin h9) from rfl, a_v2187_3]
        exact acc_step d L fl tab (wL L).val (2 * t1.val + 1) (2 * k.val + 1) 1 _ hRB ⟨15, by decide⟩ ⟨1, by decide⟩ _ rfl _ hw_v2207_3 _ (k1_off108_form ..) _ _
      have a_v1683_4 : pair1_lt.sl.v1683_4 d L tab k r g1 g2 hR hin h9 = AccMath.accVec (rowF fl tab (wL L).val (2 * t1.val + 1) (2 * k.val + 1)) (offF fl (wL L).val (2 * t1.val + 1) (2 * k.val + 1)) 1 17 := by
        rw [show pair1_lt.sl.v1683_4 d L tab k r g1 g2 hR hin h9 = addf (pair1_lt.sl.v2223_3 d L tab k r g1 g2 hR hin h9) (pair1_lt.sl.v1682_4 d L tab k r g1 g2 hR hin h9) from rfl, a_v2223_3]
        exact acc_step d L fl tab (wL L).val (2 * t1.val + 1) (2 * k.val + 1) 1 _ hRB ⟨16, by decide⟩ ⟨1, by decide⟩ _ rfl _ hw_v1667_4 _ (k1_off93_form ..) _ _
      have a_v1719_4 : pair1_lt.sl.v1719_4 d L tab k r g1 g2 hR hin h9 = AccMath.accVec (rowF fl tab (wL L).val (2 * t1.val + 1) (2 * k.val + 1)) (offF fl (wL L).val (2 * t1.val + 1) (2 * k.val + 1)) 1 18 := by
        rw [show pair1_lt.sl.v1719_4 d L tab k r g1 g2 hR hin h9 = addf (pair1_lt.sl.v1683_4 d L tab k r g1 g2 hR hin h9) (pair1_lt.sl.v1718_4 d L tab k r g1 g2 hR hin h9) from rfl, a_v1683_4]
        exact acc_step d L fl tab (wL L).val (2 * t1.val + 1) (2 * k.val + 1) 1 _ hRB ⟨17, by decide⟩ ⟨1, by decide⟩ _ rfl _ hw_v1703_4 _ (k1_off94_form ..) _ _
      have a_v1755_4 : pair1_lt.sl.v1755_4 d L tab k r g1 g2 hR hin h9 = AccMath.accVec (rowF fl tab (wL L).val (2 * t1.val + 1) (2 * k.val + 1)) (offF fl (wL L).val (2 * t1.val + 1) (2 * k.val + 1)) 1 19 := by
        rw [show pair1_lt.sl.v1755_4 d L tab k r g1 g2 hR hin h9 = addf (pair1_lt.sl.v1719_4 d L tab k r g1 g2 hR hin h9) (pair1_lt.sl.v1754_4 d L tab k r g1 g2 hR hin h9) from rfl, a_v1719_4]
        exact acc_step d L fl tab (wL L).val (2 * t1.val + 1) (2 * k.val + 1) 1 _ hRB ⟨18, by decide⟩ ⟨1, by decide⟩ _ rfl _ hw_v1739_4 _ (k1_off95_form ..) _ _
      have a_v1791_4 : pair1_lt.sl.v1791_4 d L tab k r g1 g2 hR hin h9 = AccMath.accVec (rowF fl tab (wL L).val (2 * t1.val + 1) (2 * k.val + 1)) (offF fl (wL L).val (2 * t1.val + 1) (2 * k.val + 1)) 1 20 := by
        rw [show pair1_lt.sl.v1791_4 d L tab k r g1 g2 hR hin h9 = addf (pair1_lt.sl.v1755_4 d L tab k r g1 g2 hR hin h9) (pair1_lt.sl.v1790_4 d L tab k r g1 g2 hR hin h9) from rfl, a_v1755_4]
        exact acc_step d L fl tab (wL L).val (2 * t1.val + 1) (2 * k.val + 1) 1 _ hRB ⟨19, by decide⟩ ⟨1, by decide⟩ _ rfl _ hw_v1775_4 _ (k1_off96_form ..) _ _
      have a_v1827_4 : pair1_lt.sl.v1827_4 d L tab k r g1 g2 hR hin h9 = AccMath.accVec (rowF fl tab (wL L).val (2 * t1.val + 1) (2 * k.val + 1)) (offF fl (wL L).val (2 * t1.val + 1) (2 * k.val + 1)) 1 21 := by
        rw [show pair1_lt.sl.v1827_4 d L tab k r g1 g2 hR hin h9 = addf (pair1_lt.sl.v1791_4 d L tab k r g1 g2 hR hin h9) (pair1_lt.sl.v1826_4 d L tab k r g1 g2 hR hin h9) from rfl, a_v1791_4]
        exact acc_step d L fl tab (wL L).val (2 * t1.val + 1) (2 * k.val + 1) 1 _ hRB ⟨20, by decide⟩ ⟨1, by decide⟩ _ rfl _ hw_v1811_4 _ (k1_off97_form ..) _ _
      have a_v1863_4 : pair1_lt.sl.v1863_4 d L tab k r g1 g2 hR hin h9 = AccMath.accVec (rowF fl tab (wL L).val (2 * t1.val + 1) (2 * k.val + 1)) (offF fl (wL L).val (2 * t1.val + 1) (2 * k.val + 1)) 1 22 := by
        rw [show pair1_lt.sl.v1863_4 d L tab k r g1 g2 hR hin h9 = addf (pair1_lt.sl.v1827_4 d L tab k r g1 g2 hR hin h9) (pair1_lt.sl.v1862_4 d L tab k r g1 g2 hR hin h9) from rfl, a_v1827_4]
        exact acc_step d L fl tab (wL L).val (2 * t1.val + 1) (2 * k.val + 1) 1 _ hRB ⟨21, by decide⟩ ⟨1, by decide⟩ _ rfl _ hw_v1847_4 _ (k1_off98_form ..) _ _
      have a_v1899_4 : pair1_lt.sl.v1899_4 d L tab k r g1 g2 hR hin h9 = AccMath.accVec (rowF fl tab (wL L).val (2 * t1.val + 1) (2 * k.val + 1)) (offF fl (wL L).val (2 * t1.val + 1) (2 * k.val + 1)) 1 23 := by
        rw [show pair1_lt.sl.v1899_4 d L tab k r g1 g2 hR hin h9 = addf (pair1_lt.sl.v1863_4 d L tab k r g1 g2 hR hin h9) (pair1_lt.sl.v1898_4 d L tab k r g1 g2 hR hin h9) from rfl, a_v1863_4]
        exact acc_step d L fl tab (wL L).val (2 * t1.val + 1) (2 * k.val + 1) 1 _ hRB ⟨22, by decide⟩ ⟨1, by decide⟩ _ rfl _ hw_v1883_4 _ (k1_off99_form ..) _ _
      have a_v1935_4 : pair1_lt.sl.v1935_4 d L tab k r g1 g2 hR hin h9 = AccMath.accVec (rowF fl tab (wL L).val (2 * t1.val + 1) (2 * k.val + 1)) (offF fl (wL L).val (2 * t1.val + 1) (2 * k.val + 1)) 1 24 := by
        rw [show pair1_lt.sl.v1935_4 d L tab k r g1 g2 hR hin h9 = addf (pair1_lt.sl.v1899_4 d L tab k r g1 g2 hR hin h9) (pair1_lt.sl.v1934_4 d L tab k r g1 g2 hR hin h9) from rfl, a_v1899_4]
        exact acc_step d L fl tab (wL L).val (2 * t1.val + 1) (2 * k.val + 1) 1 _ hRB ⟨23, by decide⟩ ⟨1, by decide⟩ _ rfl _ hw_v1919_4 _ (k1_off100_form ..) _ _
      have a_v1971_4 : pair1_lt.sl.v1971_4 d L tab k r g1 g2 hR hin h9 = AccMath.accVec (rowF fl tab (wL L).val (2 * t1.val + 1) (2 * k.val + 1)) (offF fl (wL L).val (2 * t1.val + 1) (2 * k.val + 1)) 1 25 := by
        rw [show pair1_lt.sl.v1971_4 d L tab k r g1 g2 hR hin h9 = addf (pair1_lt.sl.v1935_4 d L tab k r g1 g2 hR hin h9) (pair1_lt.sl.v1970_4 d L tab k r g1 g2 hR hin h9) from rfl, a_v1935_4]
        exact acc_step d L fl tab (wL L).val (2 * t1.val + 1) (2 * k.val + 1) 1 _ hRB ⟨24, by decide⟩ ⟨1, by decide⟩ _ rfl _ hw_v1955_4 _ (k1_off101_form ..) _ _
      have a_v2007_4 : pair1_lt.sl.v2007_4 d L tab k r g1 g2 hR hin h9 = AccMath.accVec (rowF fl tab (wL L).val (2 * t1.val + 1) (2 * k.val + 1)) (offF fl (wL L).val (2 * t1.val + 1) (2 * k.val + 1)) 1 26 := by
        rw [show pair1_lt.sl.v2007_4 d L tab k r g1 g2 hR hin h9 = addf (pair1_lt.sl.v1971_4 d L tab k r g1 g2 hR hin h9) (pair1_lt.sl.v2006_4 d L tab k r g1 g2 hR hin h9) from rfl, a_v1971_4]
        exact acc_step d L fl tab (wL L).val (2 * t1.val + 1) (2 * k.val + 1) 1 _ hRB ⟨25, by decide⟩ ⟨1, by decide⟩ _ rfl _ hw_v1991_4 _ (k1_off102_form ..) _ _
      have a_v2043_4 : pair1_lt.sl.v2043_4 d L tab k r g1 g2 hR hin h9 = AccMath.accVec (rowF fl tab (wL L).val (2 * t1.val + 1) (2 * k.val + 1)) (offF fl (wL L).val (2 * t1.val + 1) (2 * k.val + 1)) 1 27 := by
        rw [show pair1_lt.sl.v2043_4 d L tab k r g1 g2 hR hin h9 = addf (pair1_lt.sl.v2007_4 d L tab k r g1 g2 hR hin h9) (pair1_lt.sl.v2042_4 d L tab k r g1 g2 hR hin h9) from rfl, a_v2007_4]
        exact acc_step d L fl tab (wL L).val (2 * t1.val + 1) (2 * k.val + 1) 1 _ hRB ⟨26, by decide⟩ ⟨1, by decide⟩ _ rfl _ hw_v2027_4 _ (k1_off103_form ..) _ _
      have a_v2079_4 : pair1_lt.sl.v2079_4 d L tab k r g1 g2 hR hin h9 = AccMath.accVec (rowF fl tab (wL L).val (2 * t1.val + 1) (2 * k.val + 1)) (offF fl (wL L).val (2 * t1.val + 1) (2 * k.val + 1)) 1 28 := by
        rw [show pair1_lt.sl.v2079_4 d L tab k r g1 g2 hR hin h9 = addf (pair1_lt.sl.v2043_4 d L tab k r g1 g2 hR hin h9) (pair1_lt.sl.v2078_4 d L tab k r g1 g2 hR hin h9) from rfl, a_v2043_4]
        exact acc_step d L fl tab (wL L).val (2 * t1.val + 1) (2 * k.val + 1) 1 _ hRB ⟨27, by decide⟩ ⟨1, by decide⟩ _ rfl _ hw_v2063_4 _ (k1_off104_form ..) _ _
      have a_v2115_4 : pair1_lt.sl.v2115_4 d L tab k r g1 g2 hR hin h9 = AccMath.accVec (rowF fl tab (wL L).val (2 * t1.val + 1) (2 * k.val + 1)) (offF fl (wL L).val (2 * t1.val + 1) (2 * k.val + 1)) 1 29 := by
        rw [show pair1_lt.sl.v2115_4 d L tab k r g1 g2 hR hin h9 = addf (pair1_lt.sl.v2079_4 d L tab k r g1 g2 hR hin h9) (pair1_lt.sl.v2114_4 d L tab k r g1 g2 hR hin h9) from rfl, a_v2079_4]
        exact acc_step d L fl tab (wL L).val (2 * t1.val + 1) (2 * k.val + 1) 1 _ hRB ⟨28, by decide⟩ ⟨1, by decide⟩ _ rfl _ hw_v2099_4 _ (k1_off105_form ..) _ _
      have a_v2151_4 : pair1_lt.sl.v2151_4 d L tab k r g1 g2 hR hin h9 = AccMath.accVec (rowF fl tab (wL L).val (2 * t1.val + 1) (2 * k.val + 1)) (offF fl (wL L).val (2 * t1.val + 1) (2 * k.val + 1)) 1 30 := by
        rw [show pair1_lt.sl.v2151_4 d L tab k r g1 g2 hR hin h9 = addf (pair1_lt.sl.v2115_4 d L tab k r g1 g2 hR hin h9) (pair1_lt.sl.v2150_4 d L tab k r g1 g2 hR hin h9) from rfl, a_v2115_4]
        exact acc_step d L fl tab (wL L).val (2 * t1.val + 1) (2 * k.val + 1) 1 _ hRB ⟨29, by decide⟩ ⟨1, by decide⟩ _ rfl _ hw_v2135_4 _ (k1_off106_form ..) _ _
      have a_v2187_4 : pair1_lt.sl.v2187_4 d L tab k r g1 g2 hR hin h9 = AccMath.accVec (rowF fl tab (wL L).val (2 * t1.val + 1) (2 * k.val + 1)) (offF fl (wL L).val (2 * t1.val + 1) (2 * k.val + 1)) 1 31 := by
        rw [show pair1_lt.sl.v2187_4 d L tab k r g1 g2 hR hin h9 = addf (pair1_lt.sl.v2151_4 d L tab k r g1 g2 hR hin h9) (pair1_lt.sl.v2186_4 d L tab k r g1 g2 hR hin h9) from rfl, a_v2151_4]
        exact acc_step d L fl tab (wL L).val (2 * t1.val + 1) (2 * k.val + 1) 1 _ hRB ⟨30, by decide⟩ ⟨1, by decide⟩ _ rfl _ hw_v2171_4 _ (k1_off107_form ..) _ _
      have a_v2223_4 : pair1_lt.sl.v2223_4 d L tab k r g1 g2 hR hin h9 = AccMath.accVec (rowF fl tab (wL L).val (2 * t1.val + 1) (2 * k.val + 1)) (offF fl (wL L).val (2 * t1.val + 1) (2 * k.val + 1)) 1 32 := by
        rw [show pair1_lt.sl.v2223_4 d L tab k r g1 g2 hR hin h9 = addf (pair1_lt.sl.v2187_4 d L tab k r g1 g2 hR hin h9) (pair1_lt.sl.v2222_4 d L tab k r g1 g2 hR hin h9) from rfl, a_v2187_4]
        exact acc_step d L fl tab (wL L).val (2 * t1.val + 1) (2 * k.val + 1) 1 _ hRB ⟨31, by decide⟩ ⟨1, by decide⟩ _ rfl _ hw_v2207_4 _ (k1_off108_form ..) _ _
      have a_v1683_5 : pair1_lt.sl.v1683_5 d L tab k r g1 g2 hR hin h9 = AccMath.accVec (rowF fl tab (wL L).val (2 * t1.val + 1) (2 * k.val + 1)) (offF fl (wL L).val (2 * t1.val + 1) (2 * k.val + 1)) 1 33 := by
        rw [show pair1_lt.sl.v1683_5 d L tab k r g1 g2 hR hin h9 = addf (pair1_lt.sl.v2223_4 d L tab k r g1 g2 hR hin h9) (pair1_lt.sl.v1682_5 d L tab k r g1 g2 hR hin h9) from rfl, a_v2223_4]
        exact acc_step d L fl tab (wL L).val (2 * t1.val + 1) (2 * k.val + 1) 1 _ hRB ⟨32, by decide⟩ ⟨1, by decide⟩ _ rfl _ hw_v1667_5 _ (k1_off93_form ..) _ _
      have a_v1719_5 : pair1_lt.sl.v1719_5 d L tab k r g1 g2 hR hin h9 = AccMath.accVec (rowF fl tab (wL L).val (2 * t1.val + 1) (2 * k.val + 1)) (offF fl (wL L).val (2 * t1.val + 1) (2 * k.val + 1)) 1 34 := by
        rw [show pair1_lt.sl.v1719_5 d L tab k r g1 g2 hR hin h9 = addf (pair1_lt.sl.v1683_5 d L tab k r g1 g2 hR hin h9) (pair1_lt.sl.v1718_5 d L tab k r g1 g2 hR hin h9) from rfl, a_v1683_5]
        exact acc_step d L fl tab (wL L).val (2 * t1.val + 1) (2 * k.val + 1) 1 _ hRB ⟨33, by decide⟩ ⟨1, by decide⟩ _ rfl _ hw_v1703_5 _ (k1_off94_form ..) _ _
      have a_v1755_5 : pair1_lt.sl.v1755_5 d L tab k r g1 g2 hR hin h9 = AccMath.accVec (rowF fl tab (wL L).val (2 * t1.val + 1) (2 * k.val + 1)) (offF fl (wL L).val (2 * t1.val + 1) (2 * k.val + 1)) 1 35 := by
        rw [show pair1_lt.sl.v1755_5 d L tab k r g1 g2 hR hin h9 = addf (pair1_lt.sl.v1719_5 d L tab k r g1 g2 hR hin h9) (pair1_lt.sl.v1754_5 d L tab k r g1 g2 hR hin h9) from rfl, a_v1719_5]
        exact acc_step d L fl tab (wL L).val (2 * t1.val + 1) (2 * k.val + 1) 1 _ hRB ⟨34, by decide⟩ ⟨1, by decide⟩ _ rfl _ hw_v1739_5 _ (k1_off95_form ..) _ _
      have a_v1791_5 : pair1_lt.sl.v1791_5 d L tab k r g1 g2 hR hin h9 = AccMath.accVec (rowF fl tab (wL L).val (2 * t1.val + 1) (2 * k.val + 1)) (offF fl (wL L).val (2 * t1.val + 1) (2 * k.val + 1)) 1 36 := by
        rw [show pair1_lt.sl.v1791_5 d L tab k r g1 g2 hR hin h9 = addf (pair1_lt.sl.v1755_5 d L tab k r g1 g2 hR hin h9) (pair1_lt.sl.v1790_5 d L tab k r g1 g2 hR hin h9) from rfl, a_v1755_5]
        exact acc_step d L fl tab (wL L).val (2 * t1.val + 1) (2 * k.val + 1) 1 _ hRB ⟨35, by decide⟩ ⟨1, by decide⟩ _ rfl _ hw_v1775_5 _ (k1_off96_form ..) _ _
      have a_v1827_5 : pair1_lt.sl.v1827_5 d L tab k r g1 g2 hR hin h9 = AccMath.accVec (rowF fl tab (wL L).val (2 * t1.val + 1) (2 * k.val + 1)) (offF fl (wL L).val (2 * t1.val + 1) (2 * k.val + 1)) 1 37 := by
        rw [show pair1_lt.sl.v1827_5 d L tab k r g1 g2 hR hin h9 = addf (pair1_lt.sl.v1791_5 d L tab k r g1 g2 hR hin h9) (pair1_lt.sl.v1826_5 d L tab k r g1 g2 hR hin h9) from rfl, a_v1791_5]
        exact acc_step d L fl tab (wL L).val (2 * t1.val + 1) (2 * k.val + 1) 1 _ hRB ⟨36, by decide⟩ ⟨1, by decide⟩ _ rfl _ hw_v1811_5 _ (k1_off97_form ..) _ _
      have a_v1863_5 : pair1_lt.sl.v1863_5 d L tab k r g1 g2 hR hin h9 = AccMath.accVec (rowF fl tab (wL L).val (2 * t1.val + 1) (2 * k.val + 1)) (offF fl (wL L).val (2 * t1.val + 1) (2 * k.val + 1)) 1 38 := by
        rw [show pair1_lt.sl.v1863_5 d L tab k r g1 g2 hR hin h9 = addf (pair1_lt.sl.v1827_5 d L tab k r g1 g2 hR hin h9) (pair1_lt.sl.v1862_5 d L tab k r g1 g2 hR hin h9) from rfl, a_v1827_5]
        exact acc_step d L fl tab (wL L).val (2 * t1.val + 1) (2 * k.val + 1) 1 _ hRB ⟨37, by decide⟩ ⟨1, by decide⟩ _ rfl _ hw_v1847_5 _ (k1_off98_form ..) _ _
      have a_v1899_5 : pair1_lt.sl.v1899_5 d L tab k r g1 g2 hR hin h9 = AccMath.accVec (rowF fl tab (wL L).val (2 * t1.val + 1) (2 * k.val + 1)) (offF fl (wL L).val (2 * t1.val + 1) (2 * k.val + 1)) 1 39 := by
        rw [show pair1_lt.sl.v1899_5 d L tab k r g1 g2 hR hin h9 = addf (pair1_lt.sl.v1863_5 d L tab k r g1 g2 hR hin h9) (pair1_lt.sl.v1898_5 d L tab k r g1 g2 hR hin h9) from rfl, a_v1863_5]
        exact acc_step d L fl tab (wL L).val (2 * t1.val + 1) (2 * k.val + 1) 1 _ hRB ⟨38, by decide⟩ ⟨1, by decide⟩ _ rfl _ hw_v1883_5 _ (k1_off99_form ..) _ _
      have a_v1935_5 : pair1_lt.sl.v1935_5 d L tab k r g1 g2 hR hin h9 = AccMath.accVec (rowF fl tab (wL L).val (2 * t1.val + 1) (2 * k.val + 1)) (offF fl (wL L).val (2 * t1.val + 1) (2 * k.val + 1)) 1 40 := by
        rw [show pair1_lt.sl.v1935_5 d L tab k r g1 g2 hR hin h9 = addf (pair1_lt.sl.v1899_5 d L tab k r g1 g2 hR hin h9) (pair1_lt.sl.v1934_5 d L tab k r g1 g2 hR hin h9) from rfl, a_v1899_5]
        exact acc_step d L fl tab (wL L).val (2 * t1.val + 1) (2 * k.val + 1) 1 _ hRB ⟨39, by decide⟩ ⟨1, by decide⟩ _ rfl _ hw_v1919_5 _ (k1_off100_form ..) _ _
      have a_v1971_5 : pair1_lt.sl.v1971_5 d L tab k r g1 g2 hR hin h9 = AccMath.accVec (rowF fl tab (wL L).val (2 * t1.val + 1) (2 * k.val + 1)) (offF fl (wL L).val (2 * t1.val + 1) (2 * k.val + 1)) 1 41 := by
        rw [show pair1_lt.sl.v1971_5 d L tab k r g1 g2 hR hin h9 = addf (pair1_lt.sl.v1935_5 d L tab k r g1 g2 hR hin h9) (pair1_lt.sl.v1970_5 d L tab k r g1 g2 hR hin h9) from rfl, a_v1935_5]
        exact acc_step d L fl tab (wL L).val (2 * t1.val + 1) (2 * k.val + 1) 1 _ hRB ⟨40, by decide⟩ ⟨1, by decide⟩ _ rfl _ hw_v1955_5 _ (k1_off101_form ..) _ _
      have a_v2007_5 : pair1_lt.sl.v2007_5 d L tab k r g1 g2 hR hin h9 = AccMath.accVec (rowF fl tab (wL L).val (2 * t1.val + 1) (2 * k.val + 1)) (offF fl (wL L).val (2 * t1.val + 1) (2 * k.val + 1)) 1 42 := by
        rw [show pair1_lt.sl.v2007_5 d L tab k r g1 g2 hR hin h9 = addf (pair1_lt.sl.v1971_5 d L tab k r g1 g2 hR hin h9) (pair1_lt.sl.v2006_5 d L tab k r g1 g2 hR hin h9) from rfl, a_v1971_5]
        exact acc_step d L fl tab (wL L).val (2 * t1.val + 1) (2 * k.val + 1) 1 _ hRB ⟨41, by decide⟩ ⟨1, by decide⟩ _ rfl _ hw_v1991_5 _ (k1_off102_form ..) _ _
      have a_v2043_5 : pair1_lt.sl.v2043_5 d L tab k r g1 g2 hR hin h9 = AccMath.accVec (rowF fl tab (wL L).val (2 * t1.val + 1) (2 * k.val + 1)) (offF fl (wL L).val (2 * t1.val + 1) (2 * k.val + 1)) 1 43 := by
        rw [show pair1_lt.sl.v2043_5 d L tab k r g1 g2 hR hin h9 = addf (pair1_lt.sl.v2007_5 d L tab k r g1 g2 hR hin h9) (pair1_lt.sl.v2042_5 d L tab k r g1 g2 hR hin h9) from rfl, a_v2007_5]
        exact acc_step d L fl tab (wL L).val (2 * t1.val + 1) (2 * k.val + 1) 1 _ hRB ⟨42, by decide⟩ ⟨1, by decide⟩ _ rfl _ hw_v2027_5 _ (k1_off103_form ..) _ _
      have a_v2079_5 : pair1_lt.sl.v2079_5 d L tab k r g1 g2 hR hin h9 = AccMath.accVec (rowF fl tab (wL L).val (2 * t1.val + 1) (2 * k.val + 1)) (offF fl (wL L).val (2 * t1.val + 1) (2 * k.val + 1)) 1 44 := by
        rw [show pair1_lt.sl.v2079_5 d L tab k r g1 g2 hR hin h9 = addf (pair1_lt.sl.v2043_5 d L tab k r g1 g2 hR hin h9) (pair1_lt.sl.v2078_5 d L tab k r g1 g2 hR hin h9) from rfl, a_v2043_5]
        exact acc_step d L fl tab (wL L).val (2 * t1.val + 1) (2 * k.val + 1) 1 _ hRB ⟨43, by decide⟩ ⟨1, by decide⟩ _ rfl _ hw_v2063_5 _ (k1_off104_form ..) _ _
      have a_v2115_5 : pair1_lt.sl.v2115_5 d L tab k r g1 g2 hR hin h9 = AccMath.accVec (rowF fl tab (wL L).val (2 * t1.val + 1) (2 * k.val + 1)) (offF fl (wL L).val (2 * t1.val + 1) (2 * k.val + 1)) 1 45 := by
        rw [show pair1_lt.sl.v2115_5 d L tab k r g1 g2 hR hin h9 = addf (pair1_lt.sl.v2079_5 d L tab k r g1 g2 hR hin h9) (pair1_lt.sl.v2114_5 d L tab k r g1 g2 hR hin h9) from rfl, a_v2079_5]
        exact acc_step d L fl tab (wL L).val (2 * t1.val + 1) (2 * k.val + 1) 1 _ hRB ⟨44, by decide⟩ ⟨1, by decide⟩ _ rfl _ hw_v2099_5 _ (k1_off105_form ..) _ _
      have a_v2151_5 : pair1_lt.sl.v2151_5 d L tab k r g1 g2 hR hin h9 = AccMath.accVec (rowF fl tab (wL L).val (2 * t1.val + 1) (2 * k.val + 1)) (offF fl (wL L).val (2 * t1.val + 1) (2 * k.val + 1)) 1 46 := by
        rw [show pair1_lt.sl.v2151_5 d L tab k r g1 g2 hR hin h9 = addf (pair1_lt.sl.v2115_5 d L tab k r g1 g2 hR hin h9) (pair1_lt.sl.v2150_5 d L tab k r g1 g2 hR hin h9) from rfl, a_v2115_5]
        exact acc_step d L fl tab (wL L).val (2 * t1.val + 1) (2 * k.val + 1) 1 _ hRB ⟨45, by decide⟩ ⟨1, by decide⟩ _ rfl _ hw_v2135_5 _ (k1_off106_form ..) _ _
      have a_v2187_5 : pair1_lt.sl.v2187_5 d L tab k r g1 g2 hR hin h9 = AccMath.accVec (rowF fl tab (wL L).val (2 * t1.val + 1) (2 * k.val + 1)) (offF fl (wL L).val (2 * t1.val + 1) (2 * k.val + 1)) 1 47 := by
        rw [show pair1_lt.sl.v2187_5 d L tab k r g1 g2 hR hin h9 = addf (pair1_lt.sl.v2151_5 d L tab k r g1 g2 hR hin h9) (pair1_lt.sl.v2186_5 d L tab k r g1 g2 hR hin h9) from rfl, a_v2151_5]
        exact acc_step d L fl tab (wL L).val (2 * t1.val + 1) (2 * k.val + 1) 1 _ hRB ⟨46, by decide⟩ ⟨1, by decide⟩ _ rfl _ hw_v2171_5 _ (k1_off107_form ..) _ _
      have a_v2223_5 : pair1_lt.sl.v2223_5 d L tab k r g1 g2 hR hin h9 = AccMath.accVec (rowF fl tab (wL L).val (2 * t1.val + 1) (2 * k.val + 1)) (offF fl (wL L).val (2 * t1.val + 1) (2 * k.val + 1)) 1 48 := by
        rw [show pair1_lt.sl.v2223_5 d L tab k r g1 g2 hR hin h9 = addf (pair1_lt.sl.v2187_5 d L tab k r g1 g2 hR hin h9) (pair1_lt.sl.v2222_5 d L tab k r g1 g2 hR hin h9) from rfl, a_v2187_5]
        exact acc_step d L fl tab (wL L).val (2 * t1.val + 1) (2 * k.val + 1) 1 _ hRB ⟨47, by decide⟩ ⟨1, by decide⟩ _ rfl _ hw_v2207_5 _ (k1_off108_form ..) _ _
      have a_v1588 : pair1_lt.sl.v1588 d L tab k r g1 g2 hR hin h9 = AccMath.accVec (rowF fl tab (wL L).val (2 * t1.val + 1) (2 * k.val + 1)) (offF fl (wL L).val (2 * t1.val + 1) (2 * k.val + 1)) 1 49 := by
        rw [show pair1_lt.sl.v1588 d L tab k r g1 g2 hR hin h9 = addf (pair1_lt.sl.v2223_5 d L tab k r g1 g2 hR hin h9) (pair1_lt.sl.v1587 d L tab k r g1 g2 hR hin h9) from rfl, a_v2223_5]
        exact acc_step d L fl tab (wL L).val (2 * t1.val + 1) (2 * k.val + 1) 1 _ hRB ⟨48, by decide⟩ ⟨1, by decide⟩ _ rfl _ hw_v1572 _ (k1_off110_form ..) _ _
      have a_v1622 : pair1_lt.sl.v1622 d L tab k r g1 g2 hR hin h9 = AccMath.accVec (rowF fl tab (wL L).val (2 * t1.val + 1) (2 * k.val + 1)) (offF fl (wL L).val (2 * t1.val + 1) (2 * k.val + 1)) 1 50 := by
        rw [show pair1_lt.sl.v1622 d L tab k r g1 g2 hR hin h9 = addf (pair1_lt.sl.v1588 d L tab k r g1 g2 hR hin h9) (pair1_lt.sl.v1621 d L tab k r g1 g2 hR hin h9) from rfl, a_v1588]
        exact acc_step d L fl tab (wL L).val (2 * t1.val + 1) (2 * k.val + 1) 1 _ hRB ⟨49, by decide⟩ ⟨1, by decide⟩ _ rfl _ hw_v1606 _ (k1_off111_form ..) _ _
      have a_v1561_B2 : pair1_lt.sl.v1561 = AccMath.accVec (rowF fl tab (wL L).val (2 * t1.val + 1) (2 * k.val + 1)) (offF fl (wL L).val (2 * t1.val + 1) (2 * k.val + 1)) 2 0 := acc_zero fl tab (wL L).val (2 * t1.val + 1) (2 * k.val + 1) 2
      have a_v1691_3 : pair1_lt.sl.v1691_3 d L tab k r g1 g2 hR hin h9 = AccMath.accVec (rowF fl tab (wL L).val (2 * t1.val + 1) (2 * k.val + 1)) (offF fl (wL L).val (2 * t1.val + 1) (2 * k.val + 1)) 2 1 := by
        rw [show pair1_lt.sl.v1691_3 d L tab k r g1 g2 hR hin h9 = addf (pair1_lt.sl.v1561) (pair1_lt.sl.v1690_3 d L tab k r g1 g2 hR hin h9) from rfl, a_v1561_B2]
        exact acc_step d L fl tab (wL L).val (2 * t1.val + 1) (2 * k.val + 1) 1 _ hRB ⟨0, by decide⟩ ⟨2, by decide⟩ _ rfl _ hw_v1667_3 _ (k1_off93_form ..) _ _
      have a_v1727_3 : pair1_lt.sl.v1727_3 d L tab k r g1 g2 hR hin h9 = AccMath.accVec (rowF fl tab (wL L).val (2 * t1.val + 1) (2 * k.val + 1)) (offF fl (wL L).val (2 * t1.val + 1) (2 * k.val + 1)) 2 2 := by
        rw [show pair1_lt.sl.v1727_3 d L tab k r g1 g2 hR hin h9 = addf (pair1_lt.sl.v1691_3 d L tab k r g1 g2 hR hin h9) (pair1_lt.sl.v1726_3 d L tab k r g1 g2 hR hin h9) from rfl, a_v1691_3]
        exact acc_step d L fl tab (wL L).val (2 * t1.val + 1) (2 * k.val + 1) 1 _ hRB ⟨1, by decide⟩ ⟨2, by decide⟩ _ rfl _ hw_v1703_3 _ (k1_off94_form ..) _ _
      have a_v1763_3 : pair1_lt.sl.v1763_3 d L tab k r g1 g2 hR hin h9 = AccMath.accVec (rowF fl tab (wL L).val (2 * t1.val + 1) (2 * k.val + 1)) (offF fl (wL L).val (2 * t1.val + 1) (2 * k.val + 1)) 2 3 := by
        rw [show pair1_lt.sl.v1763_3 d L tab k r g1 g2 hR hin h9 = addf (pair1_lt.sl.v1727_3 d L tab k r g1 g2 hR hin h9) (pair1_lt.sl.v1762_3 d L tab k r g1 g2 hR hin h9) from rfl, a_v1727_3]
        exact acc_step d L fl tab (wL L).val (2 * t1.val + 1) (2 * k.val + 1) 1 _ hRB ⟨2, by decide⟩ ⟨2, by decide⟩ _ rfl _ hw_v1739_3 _ (k1_off95_form ..) _ _
      have a_v1799_3 : pair1_lt.sl.v1799_3 d L tab k r g1 g2 hR hin h9 = AccMath.accVec (rowF fl tab (wL L).val (2 * t1.val + 1) (2 * k.val + 1)) (offF fl (wL L).val (2 * t1.val + 1) (2 * k.val + 1)) 2 4 := by
        rw [show pair1_lt.sl.v1799_3 d L tab k r g1 g2 hR hin h9 = addf (pair1_lt.sl.v1763_3 d L tab k r g1 g2 hR hin h9) (pair1_lt.sl.v1798_3 d L tab k r g1 g2 hR hin h9) from rfl, a_v1763_3]
        exact acc_step d L fl tab (wL L).val (2 * t1.val + 1) (2 * k.val + 1) 1 _ hRB ⟨3, by decide⟩ ⟨2, by decide⟩ _ rfl _ hw_v1775_3 _ (k1_off96_form ..) _ _
      have a_v1835_3 : pair1_lt.sl.v1835_3 d L tab k r g1 g2 hR hin h9 = AccMath.accVec (rowF fl tab (wL L).val (2 * t1.val + 1) (2 * k.val + 1)) (offF fl (wL L).val (2 * t1.val + 1) (2 * k.val + 1)) 2 5 := by
        rw [show pair1_lt.sl.v1835_3 d L tab k r g1 g2 hR hin h9 = addf (pair1_lt.sl.v1799_3 d L tab k r g1 g2 hR hin h9) (pair1_lt.sl.v1834_3 d L tab k r g1 g2 hR hin h9) from rfl, a_v1799_3]
        exact acc_step d L fl tab (wL L).val (2 * t1.val + 1) (2 * k.val + 1) 1 _ hRB ⟨4, by decide⟩ ⟨2, by decide⟩ _ rfl _ hw_v1811_3 _ (k1_off97_form ..) _ _
      have a_v1871_3 : pair1_lt.sl.v1871_3 d L tab k r g1 g2 hR hin h9 = AccMath.accVec (rowF fl tab (wL L).val (2 * t1.val + 1) (2 * k.val + 1)) (offF fl (wL L).val (2 * t1.val + 1) (2 * k.val + 1)) 2 6 := by
        rw [show pair1_lt.sl.v1871_3 d L tab k r g1 g2 hR hin h9 = addf (pair1_lt.sl.v1835_3 d L tab k r g1 g2 hR hin h9) (pair1_lt.sl.v1870_3 d L tab k r g1 g2 hR hin h9) from rfl, a_v1835_3]
        exact acc_step d L fl tab (wL L).val (2 * t1.val + 1) (2 * k.val + 1) 1 _ hRB ⟨5, by decide⟩ ⟨2, by decide⟩ _ rfl _ hw_v1847_3 _ (k1_off98_form ..) _ _
      have a_v1907_3 : pair1_lt.sl.v1907_3 d L tab k r g1 g2 hR hin h9 = AccMath.accVec (rowF fl tab (wL L).val (2 * t1.val + 1) (2 * k.val + 1)) (offF fl (wL L).val (2 * t1.val + 1) (2 * k.val + 1)) 2 7 := by
        rw [show pair1_lt.sl.v1907_3 d L tab k r g1 g2 hR hin h9 = addf (pair1_lt.sl.v1871_3 d L tab k r g1 g2 hR hin h9) (pair1_lt.sl.v1906_3 d L tab k r g1 g2 hR hin h9) from rfl, a_v1871_3]
        exact acc_step d L fl tab (wL L).val (2 * t1.val + 1) (2 * k.val + 1) 1 _ hRB ⟨6, by decide⟩ ⟨2, by decide⟩ _ rfl _ hw_v1883_3 _ (k1_off99_form ..) _ _
      have a_v1943_3 : pair1_lt.sl.v1943_3 d L tab k r g1 g2 hR hin h9 = AccMath.accVec (rowF fl tab (wL L).val (2 * t1.val + 1) (2 * k.val + 1)) (offF fl (wL L).val (2 * t1.val + 1) (2 * k.val + 1)) 2 8 := by
        rw [show pair1_lt.sl.v1943_3 d L tab k r g1 g2 hR hin h9 = addf (pair1_lt.sl.v1907_3 d L tab k r g1 g2 hR hin h9) (pair1_lt.sl.v1942_3 d L tab k r g1 g2 hR hin h9) from rfl, a_v1907_3]
        exact acc_step d L fl tab (wL L).val (2 * t1.val + 1) (2 * k.val + 1) 1 _ hRB ⟨7, by decide⟩ ⟨2, by decide⟩ _ rfl _ hw_v1919_3 _ (k1_off100_form ..) _ _
      have a_v1979_3 : pair1_lt.sl.v1979_3 d L tab k r g1 g2 hR hin h9 = AccMath.accVec (rowF fl tab (wL L).val (2 * t1.val + 1) (2 * k.val + 1)) (offF fl (wL L).val (2 * t1.val + 1) (2 * k.val + 1)) 2 9 := by
        rw [show pair1_lt.sl.v1979_3 d L tab k r g1 g2 hR hin h9 = addf (pair1_lt.sl.v1943_3 d L tab k r g1 g2 hR hin h9) (pair1_lt.sl.v1978_3 d L tab k r g1 g2 hR hin h9) from rfl, a_v1943_3]
        exact acc_step d L fl tab (wL L).val (2 * t1.val + 1) (2 * k.val + 1) 1 _ hRB ⟨8, by decide⟩ ⟨2, by decide⟩ _ rfl _ hw_v1955_3 _ (k1_off101_form ..) _ _
      have a_v2015_3 : pair1_lt.sl.v2015_3 d L tab k r g1 g2 hR hin h9 = AccMath.accVec (rowF fl tab (wL L).val (2 * t1.val + 1) (2 * k.val + 1)) (offF fl (wL L).val (2 * t1.val + 1) (2 * k.val + 1)) 2 10 := by
        rw [show pair1_lt.sl.v2015_3 d L tab k r g1 g2 hR hin h9 = addf (pair1_lt.sl.v1979_3 d L tab k r g1 g2 hR hin h9) (pair1_lt.sl.v2014_3 d L tab k r g1 g2 hR hin h9) from rfl, a_v1979_3]
        exact acc_step d L fl tab (wL L).val (2 * t1.val + 1) (2 * k.val + 1) 1 _ hRB ⟨9, by decide⟩ ⟨2, by decide⟩ _ rfl _ hw_v1991_3 _ (k1_off102_form ..) _ _
      have a_v2051_3 : pair1_lt.sl.v2051_3 d L tab k r g1 g2 hR hin h9 = AccMath.accVec (rowF fl tab (wL L).val (2 * t1.val + 1) (2 * k.val + 1)) (offF fl (wL L).val (2 * t1.val + 1) (2 * k.val + 1)) 2 11 := by
        rw [show pair1_lt.sl.v2051_3 d L tab k r g1 g2 hR hin h9 = addf (pair1_lt.sl.v2015_3 d L tab k r g1 g2 hR hin h9) (pair1_lt.sl.v2050_3 d L tab k r g1 g2 hR hin h9) from rfl, a_v2015_3]
        exact acc_step d L fl tab (wL L).val (2 * t1.val + 1) (2 * k.val + 1) 1 _ hRB ⟨10, by decide⟩ ⟨2, by decide⟩ _ rfl _ hw_v2027_3 _ (k1_off103_form ..) _ _
      have a_v2087_3 : pair1_lt.sl.v2087_3 d L tab k r g1 g2 hR hin h9 = AccMath.accVec (rowF fl tab (wL L).val (2 * t1.val + 1) (2 * k.val + 1)) (offF fl (wL L).val (2 * t1.val + 1) (2 * k.val + 1)) 2 12 := by
        rw [show pair1_lt.sl.v2087_3 d L tab k r g1 g2 hR hin h9 = addf (pair1_lt.sl.v2051_3 d L tab k r g1 g2 hR hin h9) (pair1_lt.sl.v2086_3 d L tab k r g1 g2 hR hin h9) from rfl, a_v2051_3]
        exact acc_step d L fl tab (wL L).val (2 * t1.val + 1) (2 * k.val + 1) 1 _ hRB ⟨11, by decide⟩ ⟨2, by decide⟩ _ rfl _ hw_v2063_3 _ (k1_off104_form ..) _ _
      have a_v2123_3 : pair1_lt.sl.v2123_3 d L tab k r g1 g2 hR hin h9 = AccMath.accVec (rowF fl tab (wL L).val (2 * t1.val + 1) (2 * k.val + 1)) (offF fl (wL L).val (2 * t1.val + 1) (2 * k.val + 1)) 2 13 := by
        rw [show pair1_lt.sl.v2123_3 d L tab k r g1 g2 hR hin h9 = addf (pair1_lt.sl.v2087_3 d L tab k r g1 g2 hR hin h9) (pair1_lt.sl.v2122_3 d L tab k r g1 g2 hR hin h9) from rfl, a_v2087_3]
        exact acc_step d L fl tab (wL L).val (2 * t1.val + 1) (2 * k.val + 1) 1 _ hRB ⟨12, by decide⟩ ⟨2, by decide⟩ _ rfl _ hw_v2099_3 _ (k1_off105_form ..) _ _
      have a_v2159_3 : pair1_lt.sl.v2159_3 d L tab k r g1 g2 hR hin h9 = AccMath.accVec (rowF fl tab (wL L).val (2 * t1.val + 1) (2 * k.val + 1)) (offF fl (wL L).val (2 * t1.val + 1) (2 * k.val + 1)) 2 14 := by
        rw [show pair1_lt.sl.v2159_3 d L tab k r g1 g2 hR hin h9 = addf (pair1_lt.sl.v2123_3 d L tab k r g1 g2 hR hin h9) (pair1_lt.sl.v2158_3 d L tab k r g1 g2 hR hin h9) from rfl, a_v2123_3]
        exact acc_step d L fl tab (wL L).val (2 * t1.val + 1) (2 * k.val + 1) 1 _ hRB ⟨13, by decide⟩ ⟨2, by decide⟩ _ rfl _ hw_v2135_3 _ (k1_off106_form ..) _ _
      have a_v2195_3 : pair1_lt.sl.v2195_3 d L tab k r g1 g2 hR hin h9 = AccMath.accVec (rowF fl tab (wL L).val (2 * t1.val + 1) (2 * k.val + 1)) (offF fl (wL L).val (2 * t1.val + 1) (2 * k.val + 1)) 2 15 := by
        rw [show pair1_lt.sl.v2195_3 d L tab k r g1 g2 hR hin h9 = addf (pair1_lt.sl.v2159_3 d L tab k r g1 g2 hR hin h9) (pair1_lt.sl.v2194_3 d L tab k r g1 g2 hR hin h9) from rfl, a_v2159_3]
        exact acc_step d L fl tab (wL L).val (2 * t1.val + 1) (2 * k.val + 1) 1 _ hRB ⟨14, by decide⟩ ⟨2, by decide⟩ _ rfl _ hw_v2171_3 _ (k1_off107_form ..) _ _
      have a_v2231_3 : pair1_lt.sl.v2231_3 d L tab k r g1 g2 hR hin h9 = AccMath.accVec (rowF fl tab (wL L).val (2 * t1.val + 1) (2 * k.val + 1)) (offF fl (wL L).val (2 * t1.val + 1) (2 * k.val + 1)) 2 16 := by
        rw [show pair1_lt.sl.v2231_3 d L tab k r g1 g2 hR hin h9 = addf (pair1_lt.sl.v2195_3 d L tab k r g1 g2 hR hin h9) (pair1_lt.sl.v2230_3 d L tab k r g1 g2 hR hin h9) from rfl, a_v2195_3]
        exact acc_step d L fl tab (wL L).val (2 * t1.val + 1) (2 * k.val + 1) 1 _ hRB ⟨15, by decide⟩ ⟨2, by decide⟩ _ rfl _ hw_v2207_3 _ (k1_off108_form ..) _ _
      have a_v1691_4 : pair1_lt.sl.v1691_4 d L tab k r g1 g2 hR hin h9 = AccMath.accVec (rowF fl tab (wL L).val (2 * t1.val + 1) (2 * k.val + 1)) (offF fl (wL L).val (2 * t1.val + 1) (2 * k.val + 1)) 2 17 := by
        rw [show pair1_lt.sl.v1691_4 d L tab k r g1 g2 hR hin h9 = addf (pair1_lt.sl.v2231_3 d L tab k r g1 g2 hR hin h9) (pair1_lt.sl.v1690_4 d L tab k r g1 g2 hR hin h9) from rfl, a_v2231_3]
        exact acc_step d L fl tab (wL L).val (2 * t1.val + 1) (2 * k.val + 1) 1 _ hRB ⟨16, by decide⟩ ⟨2, by decide⟩ _ rfl _ hw_v1667_4 _ (k1_off93_form ..) _ _
      have a_v1727_4 : pair1_lt.sl.v1727_4 d L tab k r g1 g2 hR hin h9 = AccMath.accVec (rowF fl tab (wL L).val (2 * t1.val + 1) (2 * k.val + 1)) (offF fl (wL L).val (2 * t1.val + 1) (2 * k.val + 1)) 2 18 := by
        rw [show pair1_lt.sl.v1727_4 d L tab k r g1 g2 hR hin h9 = addf (pair1_lt.sl.v1691_4 d L tab k r g1 g2 hR hin h9) (pair1_lt.sl.v1726_4 d L tab k r g1 g2 hR hin h9) from rfl, a_v1691_4]
        exact acc_step d L fl tab (wL L).val (2 * t1.val + 1) (2 * k.val + 1) 1 _ hRB ⟨17, by decide⟩ ⟨2, by decide⟩ _ rfl _ hw_v1703_4 _ (k1_off94_form ..) _ _
      have a_v1763_4 : pair1_lt.sl.v1763_4 d L tab k r g1 g2 hR hin h9 = AccMath.accVec (rowF fl tab (wL L).val (2 * t1.val + 1) (2 * k.val + 1)) (offF fl (wL L).val (2 * t1.val + 1) (2 * k.val + 1)) 2 19 := by
        rw [show pair1_lt.sl.v1763_4 d L tab k r g1 g2 hR hin h9 = addf (pair1_lt.sl.v1727_4 d L tab k r g1 g2 hR hin h9) (pair1_lt.sl.v1762_4 d L tab k r g1 g2 hR hin h9) from rfl, a_v1727_4]
        exact acc_step d L fl tab (wL L).val (2 * t1.val + 1) (2 * k.val + 1) 1 _ hRB ⟨18, by decide⟩ ⟨2, by decide⟩ _ rfl _ hw_v1739_4 _ (k1_off95_form ..) _ _
      have a_v1799_4 : pair1_lt.sl.v1799_4 d L tab k r g1 g2 hR hin h9 = AccMath.accVec (rowF fl tab (wL L).val (2 * t1.val + 1) (2 * k.val + 1)) (offF fl (wL L).val (2 * t1.val + 1) (2 * k.val + 1)) 2 20 := by
        rw [show pair1_lt.sl.v1799_4 d L tab k r g1 g2 hR hin h9 = addf (pair1_lt.sl.v1763_4 d L tab k r g1 g2 hR hin h9) (pair1_lt.sl.v1798_4 d L tab k r g1 g2 hR hin h9) from rfl, a_v1763_4]
        exact acc_step d L fl tab (wL L).val (2 * t1.val + 1) (2 * k.val + 1) 1 _ hRB ⟨19, by decide⟩ ⟨2, by decide⟩ _ rfl _ hw_v1775_4 _ (k1_off96_form ..) _ _
      have a_v1835_4 : pair1_lt.sl.v1835_4 d L tab k r g1 g2 hR hin h9 = AccMath.accVec (rowF fl tab (wL L).val (2 * t1.val + 1) (2 * k.val + 1)) (offF fl (wL L).val (2 * t1.val + 1) (2 * k.val + 1)) 2 21 := by
        rw [show pair1_lt.sl.v1835_4 d L tab k r g1 g2 hR hin h9 = addf (pair1_lt.sl.v1799_4 d L tab k r g1 g2 hR hin h9) (pair1_lt.sl.v1834_4 d L tab k r g1 g2 hR hin h9) from rfl, a_v1799_4]
        exact acc_step d L fl tab (wL L).val (2 * t1.val + 1) (2 * k.val + 1) 1 _ hRB ⟨20, by decide⟩ ⟨2, by decide⟩ _ rfl _ hw_v1811_4 _ (k1_off97_form ..) _ _
      have a_v1871_4 : pair1_lt.sl.v1871_4 d L tab k r g1 g2 hR hin h9 = AccMath.accVec (rowF fl tab (wL L).val (2 * t1.val + 1) (2 * k.val + 1)) (offF fl (wL L).val (2 * t1.val + 1) (2 * k.val + 1)) 2 22 := by
        rw [show pair1_lt.sl.v1871_4 d L tab k r g1 g2 hR hin h9 = addf (pair1_lt.sl.v1835_4 d L tab k r g1 g2 hR hin h9) (pair1_lt.sl.v1870_4 d L tab k r g1 g2 hR hin h9) from rfl, a_v1835_4]
        exact acc_step d L fl tab (wL L).val (2 * t1.val + 1) (2 * k.val + 1) 1 _ hRB ⟨21, by decide⟩ ⟨2, by decide⟩ _ rfl _ hw_v1847_4 _ (k1_off98_form ..) _ _
      have a_v1907_4 : pair1_lt.sl.v1907_4 d L tab k r g1 g2 hR hin h9 = AccMath.accVec (rowF fl tab (wL L).val (2 * t1.val + 1) (2 * k.val + 1)) (offF fl (wL L).val (2 * t1.val + 1) (2 * k.val + 1)) 2 23 := by
        rw [show pair1_lt.sl.v1907_4 d L tab k r g1 g2 hR hin h9 = addf (pair1_lt.sl.v1871_4 d L tab k r g1 g2 hR hin h9) (pair1_lt.sl.v1906_4 d L tab k r g1 g2 hR hin h9) from rfl, a_v1871_4]
        exact acc_step d L fl tab (wL L).val (2 * t1.val + 1) (2 * k.val + 1) 1 _ hRB ⟨22, by decide⟩ ⟨2, by decide⟩ _ rfl _ hw_v1883_4 _ (k1_off99_form ..) _ _
      have a_v1943_4 : pair1_lt.sl.v1943_4 d L tab k r g1 g2 hR hin h9 = AccMath.accVec (rowF fl tab (wL L).val (2 * t1.val + 1) (2 * k.val + 1)) (offF fl (wL L).val (2 * t1.val + 1) (2 * k.val + 1)) 2 24 := by
        rw [show pair1_lt.sl.v1943_4 d L tab k r g1 g2 hR hin h9 = addf (pair1_lt.sl.v1907_4 d L tab k r g1 g2 hR hin h9) (pair1_lt.sl.v1942_4 d L tab k r g1 g2 hR hin h9) from rfl, a_v1907_4]
        exact acc_step d L fl tab (wL L).val (2 * t1.val + 1) (2 * k.val + 1) 1 _ hRB ⟨23, by decide⟩ ⟨2, by decide⟩ _ rfl _ hw_v1919_4 _ (k1_off100_form ..) _ _
      have a_v1979_4 : pair1_lt.sl.v1979_4 d L tab k r g1 g2 hR hin h9 = AccMath.accVec (rowF fl tab (wL L).val (2 * t1.val + 1) (2 * k.val + 1)) (offF fl (wL L).val (2 * t1.val + 1) (2 * k.val + 1)) 2 25 := by
        rw [show pair1_lt.sl.v1979_4 d L tab k r g1 g2 hR hin h9 = addf (pair1_lt.sl.v1943_4 d L tab k r g1 g2 hR hin h9) (pair1_lt.sl.v1978_4 d L tab k r g1 g2 hR hin h9) from rfl, a_v1943_4]
        exact acc_step d L fl tab (wL L).val (2 * t1.val + 1) (2 * k.val + 1) 1 _ hRB ⟨24, by decide⟩ ⟨2, by decide⟩ _ rfl _ hw_v1955_4 _ (k1_off101_form ..) _ _
      have a_v2015_4 : pair1_lt.sl.v2015_4 d L tab k r g1 g2 hR hin h9 = AccMath.accVec (rowF fl tab (wL L).val (2 * t1.val + 1) (2 * k.val + 1)) (offF fl (wL L).val (2 * t1.val + 1) (2 * k.val + 1)) 2 26 := by
        rw [show pair1_lt.sl.v2015_4 d L tab k r g1 g2 hR hin h9 = addf (pair1_lt.sl.v1979_4 d L tab k r g1 g2 hR hin h9) (pair1_lt.sl.v2014_4 d L tab k r g1 g2 hR hin h9) from rfl, a_v1979_4]
        exact acc_step d L fl tab (wL L).val (2 * t1.val + 1) (2 * k.val + 1) 1 _ hRB ⟨25, by decide⟩ ⟨2, by decide⟩ _ rfl _ hw_v1991_4 _ (k1_off102_form ..) _ _
      have a_v2051_4 : pair1_lt.sl.v2051_4 d L tab k r g1 g2 hR hin h9 = AccMath.accVec (rowF fl tab (wL L).val (2 * t1.val + 1) (2 * k.val + 1)) (offF fl (wL L).val (2 * t1.val + 1) (2 * k.val + 1)) 2 27 := by
        rw [show pair1_lt.sl.v2051_4 d L tab k r g1 g2 hR hin h9 = addf (pair1_lt.sl.v2015_4 d L tab k r g1 g2 hR hin h9) (pair1_lt.sl.v2050_4 d L tab k r g1 g2 hR hin h9) from rfl, a_v2015_4]
        exact acc_step d L fl tab (wL L).val (2 * t1.val + 1) (2 * k.val + 1) 1 _ hRB ⟨26, by decide⟩ ⟨2, by decide⟩ _ rfl _ hw_v2027_4 _ (k1_off103_form ..) _ _
      have a_v2087_4 : pair1_lt.sl.v2087_4 d L tab k r g1 g2 hR hin h9 = AccMath.accVec (rowF fl tab (wL L).val (2 * t1.val + 1) (2 * k.val + 1)) (offF fl (wL L).val (2 * t1.val + 1) (2 * k.val + 1)) 2 28 := by
        rw [show pair1_lt.sl.v2087_4 d L tab k r g1 g2 hR hin h9 = addf (pair1_lt.sl.v2051_4 d L tab k r g1 g2 hR hin h9) (pair1_lt.sl.v2086_4 d L tab k r g1 g2 hR hin h9) from rfl, a_v2051_4]
        exact acc_step d L fl tab (wL L).val (2 * t1.val + 1) (2 * k.val + 1) 1 _ hRB ⟨27, by decide⟩ ⟨2, by decide⟩ _ rfl _ hw_v2063_4 _ (k1_off104_form ..) _ _
      have a_v2123_4 : pair1_lt.sl.v2123_4 d L tab k r g1 g2 hR hin h9 = AccMath.accVec (rowF fl tab (wL L).val (2 * t1.val + 1) (2 * k.val + 1)) (offF fl (wL L).val (2 * t1.val + 1) (2 * k.val + 1)) 2 29 := by
        rw [show pair1_lt.sl.v2123_4 d L tab k r g1 g2 hR hin h9 = addf (pair1_lt.sl.v2087_4 d L tab k r g1 g2 hR hin h9) (pair1_lt.sl.v2122_4 d L tab k r g1 g2 hR hin h9) from rfl, a_v2087_4]
        exact acc_step d L fl tab (wL L).val (2 * t1.val + 1) (2 * k.val + 1) 1 _ hRB ⟨28, by decide⟩ ⟨2, by decide⟩ _ rfl _ hw_v2099_4 _ (k1_off105_form ..) _ _
      have a_v2159_4 : pair1_lt.sl.v2159_4 d L tab k r g1 g2 hR hin h9 = AccMath.accVec (rowF fl tab (wL L).val (2 * t1.val + 1) (2 * k.val + 1)) (offF fl (wL L).val (2 * t1.val + 1) (2 * k.val + 1)) 2 30 := by
        rw [show pair1_lt.sl.v2159_4 d L tab k r g1 g2 hR hin h9 = addf (pair1_lt.sl.v2123_4 d L tab k r g1 g2 hR hin h9) (pair1_lt.sl.v2158_4 d L tab k r g1 g2 hR hin h9) from rfl, a_v2123_4]
        exact acc_step d L fl tab (wL L).val (2 * t1.val + 1) (2 * k.val + 1) 1 _ hRB ⟨29, by decide⟩ ⟨2, by decide⟩ _ rfl _ hw_v2135_4 _ (k1_off106_form ..) _ _
      have a_v2195_4 : pair1_lt.sl.v2195_4 d L tab k r g1 g2 hR hin h9 = AccMath.accVec (rowF fl tab (wL L).val (2 * t1.val + 1) (2 * k.val + 1)) (offF fl (wL L).val (2 * t1.val + 1) (2 * k.val + 1)) 2 31 := by
        rw [show pair1_lt.sl.v2195_4 d L tab k r g1 g2 hR hin h9 = addf (pair1_lt.sl.v2159_4 d L tab k r g1 g2 hR hin h9) (pair1_lt.sl.v2194_4 d L tab k r g1 g2 hR hin h9) from rfl, a_v2159_4]
        exact acc_step d L fl tab (wL L).val (2 * t1.val + 1) (2 * k.val + 1) 1 _ hRB ⟨30, by decide⟩ ⟨2, by decide⟩ _ rfl _ hw_v2171_4 _ (k1_off107_form ..) _ _
      have a_v2231_4 : pair1_lt.sl.v2231_4 d L tab k r g1 g2 hR hin h9 = AccMath.accVec (rowF fl tab (wL L).val (2 * t1.val + 1) (2 * k.val + 1)) (offF fl (wL L).val (2 * t1.val + 1) (2 * k.val + 1)) 2 32 := by
        rw [show pair1_lt.sl.v2231_4 d L tab k r g1 g2 hR hin h9 = addf (pair1_lt.sl.v2195_4 d L tab k r g1 g2 hR hin h9) (pair1_lt.sl.v2230_4 d L tab k r g1 g2 hR hin h9) from rfl, a_v2195_4]
        exact acc_step d L fl tab (wL L).val (2 * t1.val + 1) (2 * k.val + 1) 1 _ hRB ⟨31, by decide⟩ ⟨2, by decide⟩ _ rfl _ hw_v2207_4 _ (k1_off108_form ..) _ _
      have a_v1691_5 : pair1_lt.sl.v1691_5 d L tab k r g1 g2 hR hin h9 = AccMath.accVec (rowF fl tab (wL L).val (2 * t1.val + 1) (2 * k.val + 1)) (offF fl (wL L).val (2 * t1.val + 1) (2 * k.val + 1)) 2 33 := by
        rw [show pair1_lt.sl.v1691_5 d L tab k r g1 g2 hR hin h9 = addf (pair1_lt.sl.v2231_4 d L tab k r g1 g2 hR hin h9) (pair1_lt.sl.v1690_5 d L tab k r g1 g2 hR hin h9) from rfl, a_v2231_4]
        exact acc_step d L fl tab (wL L).val (2 * t1.val + 1) (2 * k.val + 1) 1 _ hRB ⟨32, by decide⟩ ⟨2, by decide⟩ _ rfl _ hw_v1667_5 _ (k1_off93_form ..) _ _
      have a_v1727_5 : pair1_lt.sl.v1727_5 d L tab k r g1 g2 hR hin h9 = AccMath.accVec (rowF fl tab (wL L).val (2 * t1.val + 1) (2 * k.val + 1)) (offF fl (wL L).val (2 * t1.val + 1) (2 * k.val + 1)) 2 34 := by
        rw [show pair1_lt.sl.v1727_5 d L tab k r g1 g2 hR hin h9 = addf (pair1_lt.sl.v1691_5 d L tab k r g1 g2 hR hin h9) (pair1_lt.sl.v1726_5 d L tab k r g1 g2 hR hin h9) from rfl, a_v1691_5]
        exact acc_step d L fl tab (wL L).val (2 * t1.val + 1) (2 * k.val + 1) 1 _ hRB ⟨33, by decide⟩ ⟨2, by decide⟩ _ rfl _ hw_v1703_5 _ (k1_off94_form ..) _ _
      have a_v1763_5 : pair1_lt.sl.v1763_5 d L tab k r g1 g2 hR hin h9 = AccMath.accVec (rowF fl tab (wL L).val (2 * t1.val + 1) (2 * k.val + 1)) (offF fl (wL L).val (2 * t1.val + 1) (2 * k.val + 1)) 2 35 := by
        rw [show pair1_lt.sl.v1763_5 d L tab k r g1 g2 hR hin h9 = addf (pair1_lt.sl.v1727_5 d L tab k r g1 g2 hR hin h9) (pair1_lt.sl.v1762_5 d L tab k r g1 g2 hR hin h9) from rfl, a_v1727_5]
        exact acc_step d L fl tab (wL L).val (2 * t1.val + 1) (2 * k.val + 1) 1 _ hRB ⟨34, by decide⟩ ⟨2, by decide⟩ _ rfl _ hw_v1739_5 _ (k1_off95_form ..) _ _
      have a_v1799_5 : pair1_lt.sl.v1799_5 d L tab k r g1 g2 hR hin h9 = AccMath.accVec (rowF fl tab (wL L).val (2 * t1.val + 1) (2 * k.val + 1)) (offF fl (wL L).val (2 * t1.val + 1) (2 * k.val + 1)) 2 36 := by
        rw [show pair1_lt.sl.v1799_5 d L tab k r g1 g2 hR hin h9 = addf (pair1_lt.sl.v1763_5 d L tab k r g1 g2 hR hin h9) (pair1_lt.sl.v1798_5 d L tab k r g1 g2 hR hin h9) from rfl, a_v1763_5]
        exact acc_step d L fl tab (wL L).val (2 * t1.val + 1) (2 * k.val + 1) 1 _ hRB ⟨35, by decide⟩ ⟨2, by decide⟩ _ rfl _ hw_v1775_5 _ (k1_off96_form ..) _ _
      have a_v1835_5 : pair1_lt.sl.v1835_5 d L tab k r g1 g2 hR hin h9 = AccMath.accVec (rowF fl tab (wL L).val (2 * t1.val + 1) (2 * k.val + 1)) (offF fl (wL L).val (2 * t1.val + 1) (2 * k.val + 1)) 2 37 := by
        rw [show pair1_lt.sl.v1835_5 d L tab k r g1 g2 hR hin h9 = addf (pair1_lt.sl.v1799_5 d L tab k r g1 g2 hR hin h9) (pair1_lt.sl.v1834_5 d L tab k r g1 g2 hR hin h9) from rfl, a_v1799_5]
        exact acc_step d L fl tab (wL L).val (2 * t1.val + 1) (2 * k.val + 1) 1 _ hRB ⟨36, by decide⟩ ⟨2, by decide⟩ _ rfl _ hw_v1811_5 _ (k1_off97_form ..) _ _
      have a_v1871_5 : pair1_lt.sl.v1871_5 d L tab k r g1 g2 hR hin h9 = AccMath.accVec (rowF fl tab (wL L).val (2 * t1.val + 1) (2 * k.val + 1)) (offF fl (wL L).val (2 * t1.val + 1) (2 * k.val + 1)) 2 38 := by
        rw [show pair1_lt.sl.v1871_5 d L tab k r g1 g2 hR hin h9 = addf (pair1_lt.sl.v1835_5 d L tab k r g1 g2 hR hin h9) (pair1_lt.sl.v1870_5 d L tab k r g1 g2 hR hin h9) from rfl, a_v1835_5]
        exact acc_step d L fl tab (wL L).val (2 * t1.val + 1) (2 * k.val + 1) 1 _ hRB ⟨37, by decide⟩ ⟨2, by decide⟩ _ rfl _ hw_v1847_5 _ (k1_off98_form ..) _ _
      have a_v1907_5 : pair1_lt.sl.v1907_5 d L tab k r g1 g2 hR hin h9 = AccMath.accVec (rowF fl tab (wL L).val (2 * t1.val + 1) (2 * k.val + 1)) (offF fl (wL L).val (2 * t1.val + 1) (2 * k.val + 1)) 2 39 := by
        rw [show pair1_lt.sl.v1907_5 d L tab k r g1 g2 hR hin h9 = addf (pair1_lt.sl.v1871_5 d L tab k r g1 g2 hR hin h9) (pair1_lt.sl.v1906_5 d L tab k r g1 g2 hR hin h9) from rfl, a_v1871_5]
        exact acc_step d L fl tab (wL L).val (2 * t1.val + 1) (2 * k.val + 1) 1 _ hRB ⟨38, by decide⟩ ⟨2, by decide⟩ _ rfl _ hw_v1883_5 _ (k1_off99_form ..) _ _
      have a_v1943_5 : pair1_lt.sl.v1943_5 d L tab k r g1 g2 hR hin h9 = AccMath.accVec (rowF fl tab (wL L).val (2 * t1.val + 1) (2 * k.val + 1)) (offF fl (wL L).val (2 * t1.val + 1) (2 * k.val + 1)) 2 40 := by
        rw [show pair1_lt.sl.v1943_5 d L tab k r g1 g2 hR hin h9 = addf (pair1_lt.sl.v1907_5 d L tab k r g1 g2 hR hin h9) (pair1_lt.sl.v1942_5 d L tab k r g1 g2 hR hin h9) from rfl, a_v1907_5]
        exact acc_step d L fl tab (wL L).val (2 * t1.val + 1) (2 * k.val + 1) 1 _ hRB ⟨39, by decide⟩ ⟨2, by decide⟩ _ rfl _ hw_v1919_5 _ (k1_off100_form ..) _ _
      have a_v1979_5 : pair1_lt.sl.v1979_5 d L tab k r g1 g2 hR hin h9 = AccMath.accVec (rowF fl tab (wL L).val (2 * t1.val + 1) (2 * k.val + 1)) (offF fl (wL L).val (2 * t1.val + 1) (2 * k.val + 1)) 2 41 := by
        rw [show pair1_lt.sl.v1979_5 d L tab k r g1 g2 hR hin h9 = addf (pair1_lt.sl.v1943_5 d L tab k r g1 g2 hR hin h9) (pair1_lt.sl.v1978_5 d L tab k r g1 g2 hR hin h9) from rfl, a_v1943_5]
        exact acc_step d L fl tab (wL L).val (2 * t1.val + 1) (2 * k.val + 1) 1 _ hRB ⟨40, by decide⟩ ⟨2, by decide⟩ _ rfl _ hw_v1955_5 _ (k1_off101_form ..) _ _
      have a_v2015_5 : pair1_lt.sl.v2015_5 d L tab k r g1 g2 hR hin h9 = AccMath.accVec (rowF fl tab (wL L).val (2 * t1.val + 1) (2 * k.val + 1)) (offF fl (wL L).val (2 * t1.val + 1) (2 * k.val + 1)) 2 42 := by
        rw [show pair1_lt.sl.v2015_5 d L tab k r g1 g2 hR hin h9 = addf (pair1_lt.sl.v1979_5 d L tab k r g1 g2 hR hin h9) (pair1_lt.sl.v2014_5 d L tab k r g1 g2 hR hin h9) from rfl, a_v1979_5]
        exact acc_step d L fl tab (wL L).val (2 * t1.val + 1) (2 * k.val + 1) 1 _ hRB ⟨41, by decide⟩ ⟨2, by decide⟩ _ rfl _ hw_v1991_5 _ (k1_off102_form ..) _ _
      have a_v2051_5 : pair1_lt.sl.v2051_5 d L tab k r g1 g2 hR hin h9 = AccMath.accVec (rowF fl tab (wL L).val (2 * t1.val + 1) (2 * k.val + 1)) (offF fl (wL L).val (2 * t1.val + 1) (2 * k.val + 1)) 2 43 := by
        rw [show pair1_lt.sl.v2051_5 d L tab k r g1 g2 hR hin h9 = addf (pair1_lt.sl.v2015_5 d L tab k r g1 g2 hR hin h9) (pair1_lt.sl.v2050_5 d L tab k r g1 g2 hR hin h9) from rfl, a_v2015_5]
        exact acc_step d L fl tab (wL L).val (2 * t1.val + 1) (2 * k.val + 1) 1 _ hRB ⟨42, by decide⟩ ⟨2, by decide⟩ _ rfl _ hw_v2027_5 _ (k1_off103_form ..) _ _
      have a_v2087_5 : pair1_lt.sl.v2087_5 d L tab k r g1 g2 hR hin h9 = AccMath.accVec (rowF fl tab (wL L).val (2 * t1.val + 1) (2 * k.val + 1)) (offF fl (wL L).val (2 * t1.val + 1) (2 * k.val + 1)) 2 44 := by
        rw [show pair1_lt.sl.v2087_5 d L tab k r g1 g2 hR hin h9 = addf (pair1_lt.sl.v2051_5 d L tab k r g1 g2 hR hin h9) (pair1_lt.sl.v2086_5 d L tab k r g1 g2 hR hin h9) from rfl, a_v2051_5]
        exact acc_step d L fl tab (wL L).val (2 * t1.val + 1) (2 * k.val + 1) 1 _ hRB ⟨43, by decide⟩ ⟨2, by decide⟩ _ rfl _ hw_v2063_5 _ (k1_off104_form ..) _ _
      have a_v2123_5 : pair1_lt.sl.v2123_5 d L tab k r g1 g2 hR hin h9 = AccMath.accVec (rowF fl tab (wL L).val (2 * t1.val + 1) (2 * k.val + 1)) (offF fl (wL L).val (2 * t1.val + 1) (2 * k.val + 1)) 2 45 := by
        rw [show pair1_lt.sl.v2123_5 d L tab k r g1 g2 hR hin h9 = addf (pair1_lt.sl.v2087_5 d L tab k r g1 g2 hR hin h9) (pair1_lt.sl.v2122_5 d L tab k r g1 g2 hR hin h9) from rfl, a_v2087_5]
        exact acc_step d L fl tab (wL L).val (2 * t1.val + 1) (2 * k.val + 1) 1 _ hRB ⟨44, by decide⟩ ⟨2, by decide⟩ _ rfl _ hw_v2099_5 _ (k1_off105_form ..) _ _
      have a_v2159_5 : pair1_lt.sl.v2159_5 d L tab k r g1 g2 hR hin h9 = AccMath.accVec (rowF fl tab (wL L).val (2 * t1.val + 1) (2 * k.val + 1)) (offF fl (wL L).val (2 * t1.val + 1) (2 * k.val + 1)) 2 46 := by
        rw [show pair1_lt.sl.v2159_5 d L tab k r g1 g2 hR hin h9 = addf (pair1_lt.sl.v2123_5 d L tab k r g1 g2 hR hin h9) (pair1_lt.sl.v2158_5 d L tab k r g1 g2 hR hin h9) from rfl, a_v2123_5]
        exact acc_step d L fl tab (wL L).val (2 * t1.val + 1) (2 * k.val + 1) 1 _ hRB ⟨45, by decide⟩ ⟨2, by decide⟩ _ rfl _ hw_v2135_5 _ (k1_off106_form ..) _ _
      have a_v2195_5 : pair1_lt.sl.v2195_5 d L tab k r g1 g2 hR hin h9 = AccMath.accVec (rowF fl tab (wL L).val (2 * t1.val + 1) (2 * k.val + 1)) (offF fl (wL L).val (2 * t1.val + 1) (2 * k.val + 1)) 2 47 := by
        rw [show pair1_lt.sl.v2195_5 d L tab k r g1 g2 hR hin h9 = addf (pair1_lt.sl.v2159_5 d L tab k r g1 g2 hR hin h9) (pair1_lt.sl.v2194_5 d L tab k r g1 g2 hR hin h9) from rfl, a_v2159_5]
        exact acc_step d L fl tab (wL L).val (2 * t1.val + 1) (2 * k.val + 1) 1 _ hRB ⟨46, by decide⟩ ⟨2, by decide⟩ _ rfl _ hw_v2171_5 _ (k1_off107_form ..) _ _
      have a_v2231_5 : pair1_lt.sl.v2231_5 d L tab k r g1 g2 hR hin h9 = AccMath.accVec (rowF fl tab (wL L).val (2 * t1.val + 1) (2 * k.val + 1)) (offF fl (wL L).val (2 * t1.val + 1) (2 * k.val + 1)) 2 48 := by
        rw [show pair1_lt.sl.v2231_5 d L tab k r g1 g2 hR hin h9 = addf (pair1_lt.sl.v2195_5 d L tab k r g1 g2 hR hin h9) (pair1_lt.sl.v2230_5 d L tab k r g1 g2 hR hin h9) from rfl, a_v2195_5]
        exact acc_step d L fl tab (wL L).val (2 * t1.val + 1) (2 * k.val + 1) 1 _ hRB ⟨47, by decide⟩ ⟨2, by decide⟩ _ rfl _ hw_v2207_5 _ (k1_off108_form ..) _ _
      have a_v1596 : pair1_lt.sl.v1596 d L tab k r g1 g2 hR hin h9 = AccMath.accVec (rowF fl tab (wL L).val (2 * t1.val + 1) (2 * k.val + 1)) (offF fl (wL L).val (2 * t1.val + 1) (2 * k.val + 1)) 2 49 := by
        rw [show pair1_lt.sl.v1596 d L tab k r g1 g2 hR hin h9 = addf (pair1_lt.sl.v2231_5 d L tab k r g1 g2 hR hin h9) (pair1_lt.sl.v1595 d L tab k r g1 g2 hR hin h9) from rfl, a_v2231_5]
        exact acc_step d L fl tab (wL L).val (2 * t1.val + 1) (2 * k.val + 1) 1 _ hRB ⟨48, by decide⟩ ⟨2, by decide⟩ _ rfl _ hw_v1572 _ (k1_off110_form ..) _ _
      have a_v1630 : pair1_lt.sl.v1630 d L tab k r g1 g2 hR hin h9 = AccMath.accVec (rowF fl tab (wL L).val (2 * t1.val + 1) (2 * k.val + 1)) (offF fl (wL L).val (2 * t1.val + 1) (2 * k.val + 1)) 2 50 := by
        rw [show pair1_lt.sl.v1630 d L tab k r g1 g2 hR hin h9 = addf (pair1_lt.sl.v1596 d L tab k r g1 g2 hR hin h9) (pair1_lt.sl.v1629 d L tab k r g1 g2 hR hin h9) from rfl, a_v1596]
        exact acc_step d L fl tab (wL L).val (2 * t1.val + 1) (2 * k.val + 1) 1 _ hRB ⟨49, by decide⟩ ⟨2, by decide⟩ _ rfl _ hw_v1606 _ (k1_off111_form ..) _ _
      have a_v1561_B3 : pair1_lt.sl.v1561 = AccMath.accVec (rowF fl tab (wL L).val (2 * t1.val + 1) (2 * k.val + 1)) (offF fl (wL L).val (2 * t1.val + 1) (2 * k.val + 1)) 3 0 := acc_zero fl tab (wL L).val (2 * t1.val + 1) (2 * k.val + 1) 3
      have a_v1699_3 : pair1_lt.sl.v1699_3 d L tab k r g1 g2 hR hin h9 = AccMath.accVec (rowF fl tab (wL L).val (2 * t1.val + 1) (2 * k.val + 1)) (offF fl (wL L).val (2 * t1.val + 1) (2 * k.val + 1)) 3 1 := by
        rw [show pair1_lt.sl.v1699_3 d L tab k r g1 g2 hR hin h9 = addf (pair1_lt.sl.v1561) (pair1_lt.sl.v1698_3 d L tab k r g1 g2 hR hin h9) from rfl, a_v1561_B3]
        exact acc_step d L fl tab (wL L).val (2 * t1.val + 1) (2 * k.val + 1) 1 _ hRB ⟨0, by decide⟩ ⟨3, by decide⟩ _ rfl _ hw_v1667_3 _ (k1_off93_form ..) _ _
      have a_v1735_3 : pair1_lt.sl.v1735_3 d L tab k r g1 g2 hR hin h9 = AccMath.accVec (rowF fl tab (wL L).val (2 * t1.val + 1) (2 * k.val + 1)) (offF fl (wL L).val (2 * t1.val + 1) (2 * k.val + 1)) 3 2 := by
        rw [show pair1_lt.sl.v1735_3 d L tab k r g1 g2 hR hin h9 = addf (pair1_lt.sl.v1699_3 d L tab k r g1 g2 hR hin h9) (pair1_lt.sl.v1734_3 d L tab k r g1 g2 hR hin h9) from rfl, a_v1699_3]
        exact acc_step d L fl tab (wL L).val (2 * t1.val + 1) (2 * k.val + 1) 1 _ hRB ⟨1, by decide⟩ ⟨3, by decide⟩ _ rfl _ hw_v1703_3 _ (k1_off94_form ..) _ _
      have a_v1771_3 : pair1_lt.sl.v1771_3 d L tab k r g1 g2 hR hin h9 = AccMath.accVec (rowF fl tab (wL L).val (2 * t1.val + 1) (2 * k.val + 1)) (offF fl (wL L).val (2 * t1.val + 1) (2 * k.val + 1)) 3 3 := by
        rw [show pair1_lt.sl.v1771_3 d L tab k r g1 g2 hR hin h9 = addf (pair1_lt.sl.v1735_3 d L tab k r g1 g2 hR hin h9) (pair1_lt.sl.v1770_3 d L tab k r g1 g2 hR hin h9) from rfl, a_v1735_3]
        exact acc_step d L fl tab (wL L).val (2 * t1.val + 1) (2 * k.val + 1) 1 _ hRB ⟨2, by decide⟩ ⟨3, by decide⟩ _ rfl _ hw_v1739_3 _ (k1_off95_form ..) _ _
      have a_v1807_3 : pair1_lt.sl.v1807_3 d L tab k r g1 g2 hR hin h9 = AccMath.accVec (rowF fl tab (wL L).val (2 * t1.val + 1) (2 * k.val + 1)) (offF fl (wL L).val (2 * t1.val + 1) (2 * k.val + 1)) 3 4 := by
        rw [show pair1_lt.sl.v1807_3 d L tab k r g1 g2 hR hin h9 = addf (pair1_lt.sl.v1771_3 d L tab k r g1 g2 hR hin h9) (pair1_lt.sl.v1806_3 d L tab k r g1 g2 hR hin h9) from rfl, a_v1771_3]
        exact acc_step d L fl tab (wL L).val (2 * t1.val + 1) (2 * k.val + 1) 1 _ hRB ⟨3, by decide⟩ ⟨3, by decide⟩ _ rfl _ hw_v1775_3 _ (k1_off96_form ..) _ _
      have a_v1843_3 : pair1_lt.sl.v1843_3 d L tab k r g1 g2 hR hin h9 = AccMath.accVec (rowF fl tab (wL L).val (2 * t1.val + 1) (2 * k.val + 1)) (offF fl (wL L).val (2 * t1.val + 1) (2 * k.val + 1)) 3 5 := by
        rw [show pair1_lt.sl.v1843_3 d L tab k r g1 g2 hR hin h9 = addf (pair1_lt.sl.v1807_3 d L tab k r g1 g2 hR hin h9) (pair1_lt.sl.v1842_3 d L tab k r g1 g2 hR hin h9) from rfl, a_v1807_3]
        exact acc_step d L fl tab (wL L).val (2 * t1.val + 1) (2 * k.val + 1) 1 _ hRB ⟨4, by decide⟩ ⟨3, by decide⟩ _ rfl _ hw_v1811_3 _ (k1_off97_form ..) _ _
      have a_v1879_3 : pair1_lt.sl.v1879_3 d L tab k r g1 g2 hR hin h9 = AccMath.accVec (rowF fl tab (wL L).val (2 * t1.val + 1) (2 * k.val + 1)) (offF fl (wL L).val (2 * t1.val + 1) (2 * k.val + 1)) 3 6 := by
        rw [show pair1_lt.sl.v1879_3 d L tab k r g1 g2 hR hin h9 = addf (pair1_lt.sl.v1843_3 d L tab k r g1 g2 hR hin h9) (pair1_lt.sl.v1878_3 d L tab k r g1 g2 hR hin h9) from rfl, a_v1843_3]
        exact acc_step d L fl tab (wL L).val (2 * t1.val + 1) (2 * k.val + 1) 1 _ hRB ⟨5, by decide⟩ ⟨3, by decide⟩ _ rfl _ hw_v1847_3 _ (k1_off98_form ..) _ _
      have a_v1915_3 : pair1_lt.sl.v1915_3 d L tab k r g1 g2 hR hin h9 = AccMath.accVec (rowF fl tab (wL L).val (2 * t1.val + 1) (2 * k.val + 1)) (offF fl (wL L).val (2 * t1.val + 1) (2 * k.val + 1)) 3 7 := by
        rw [show pair1_lt.sl.v1915_3 d L tab k r g1 g2 hR hin h9 = addf (pair1_lt.sl.v1879_3 d L tab k r g1 g2 hR hin h9) (pair1_lt.sl.v1914_3 d L tab k r g1 g2 hR hin h9) from rfl, a_v1879_3]
        exact acc_step d L fl tab (wL L).val (2 * t1.val + 1) (2 * k.val + 1) 1 _ hRB ⟨6, by decide⟩ ⟨3, by decide⟩ _ rfl _ hw_v1883_3 _ (k1_off99_form ..) _ _
      have a_v1951_3 : pair1_lt.sl.v1951_3 d L tab k r g1 g2 hR hin h9 = AccMath.accVec (rowF fl tab (wL L).val (2 * t1.val + 1) (2 * k.val + 1)) (offF fl (wL L).val (2 * t1.val + 1) (2 * k.val + 1)) 3 8 := by
        rw [show pair1_lt.sl.v1951_3 d L tab k r g1 g2 hR hin h9 = addf (pair1_lt.sl.v1915_3 d L tab k r g1 g2 hR hin h9) (pair1_lt.sl.v1950_3 d L tab k r g1 g2 hR hin h9) from rfl, a_v1915_3]
        exact acc_step d L fl tab (wL L).val (2 * t1.val + 1) (2 * k.val + 1) 1 _ hRB ⟨7, by decide⟩ ⟨3, by decide⟩ _ rfl _ hw_v1919_3 _ (k1_off100_form ..) _ _
      have a_v1987_3 : pair1_lt.sl.v1987_3 d L tab k r g1 g2 hR hin h9 = AccMath.accVec (rowF fl tab (wL L).val (2 * t1.val + 1) (2 * k.val + 1)) (offF fl (wL L).val (2 * t1.val + 1) (2 * k.val + 1)) 3 9 := by
        rw [show pair1_lt.sl.v1987_3 d L tab k r g1 g2 hR hin h9 = addf (pair1_lt.sl.v1951_3 d L tab k r g1 g2 hR hin h9) (pair1_lt.sl.v1986_3 d L tab k r g1 g2 hR hin h9) from rfl, a_v1951_3]
        exact acc_step d L fl tab (wL L).val (2 * t1.val + 1) (2 * k.val + 1) 1 _ hRB ⟨8, by decide⟩ ⟨3, by decide⟩ _ rfl _ hw_v1955_3 _ (k1_off101_form ..) _ _
      have a_v2023_3 : pair1_lt.sl.v2023_3 d L tab k r g1 g2 hR hin h9 = AccMath.accVec (rowF fl tab (wL L).val (2 * t1.val + 1) (2 * k.val + 1)) (offF fl (wL L).val (2 * t1.val + 1) (2 * k.val + 1)) 3 10 := by
        rw [show pair1_lt.sl.v2023_3 d L tab k r g1 g2 hR hin h9 = addf (pair1_lt.sl.v1987_3 d L tab k r g1 g2 hR hin h9) (pair1_lt.sl.v2022_3 d L tab k r g1 g2 hR hin h9) from rfl, a_v1987_3]
        exact acc_step d L fl tab (wL L).val (2 * t1.val + 1) (2 * k.val + 1) 1 _ hRB ⟨9, by decide⟩ ⟨3, by decide⟩ _ rfl _ hw_v1991_3 _ (k1_off102_form ..) _ _
      have a_v2059_3 : pair1_lt.sl.v2059_3 d L tab k r g1 g2 hR hin h9 = AccMath.accVec (rowF fl tab (wL L).val (2 * t1.val + 1) (2 * k.val + 1)) (offF fl (wL L).val (2 * t1.val + 1) (2 * k.val + 1)) 3 11 := by
        rw [show pair1_lt.sl.v2059_3 d L tab k r g1 g2 hR hin h9 = addf (pair1_lt.sl.v2023_3 d L tab k r g1 g2 hR hin h9) (pair1_lt.sl.v2058_3 d L tab k r g1 g2 hR hin h9) from rfl, a_v2023_3]
        exact acc_step d L fl tab (wL L).val (2 * t1.val + 1) (2 * k.val + 1) 1 _ hRB ⟨10, by decide⟩ ⟨3, by decide⟩ _ rfl _ hw_v2027_3 _ (k1_off103_form ..) _ _
      have a_v2095_3 : pair1_lt.sl.v2095_3 d L tab k r g1 g2 hR hin h9 = AccMath.accVec (rowF fl tab (wL L).val (2 * t1.val + 1) (2 * k.val + 1)) (offF fl (wL L).val (2 * t1.val + 1) (2 * k.val + 1)) 3 12 := by
        rw [show pair1_lt.sl.v2095_3 d L tab k r g1 g2 hR hin h9 = addf (pair1_lt.sl.v2059_3 d L tab k r g1 g2 hR hin h9) (pair1_lt.sl.v2094_3 d L tab k r g1 g2 hR hin h9) from rfl, a_v2059_3]
        exact acc_step d L fl tab (wL L).val (2 * t1.val + 1) (2 * k.val + 1) 1 _ hRB ⟨11, by decide⟩ ⟨3, by decide⟩ _ rfl _ hw_v2063_3 _ (k1_off104_form ..) _ _
      have a_v2131_3 : pair1_lt.sl.v2131_3 d L tab k r g1 g2 hR hin h9 = AccMath.accVec (rowF fl tab (wL L).val (2 * t1.val + 1) (2 * k.val + 1)) (offF fl (wL L).val (2 * t1.val + 1) (2 * k.val + 1)) 3 13 := by
        rw [show pair1_lt.sl.v2131_3 d L tab k r g1 g2 hR hin h9 = addf (pair1_lt.sl.v2095_3 d L tab k r g1 g2 hR hin h9) (pair1_lt.sl.v2130_3 d L tab k r g1 g2 hR hin h9) from rfl, a_v2095_3]
        exact acc_step d L fl tab (wL L).val (2 * t1.val + 1) (2 * k.val + 1) 1 _ hRB ⟨12, by decide⟩ ⟨3, by decide⟩ _ rfl _ hw_v2099_3 _ (k1_off105_form ..) _ _
      have a_v2167_3 : pair1_lt.sl.v2167_3 d L tab k r g1 g2 hR hin h9 = AccMath.accVec (rowF fl tab (wL L).val (2 * t1.val + 1) (2 * k.val + 1)) (offF fl (wL L).val (2 * t1.val + 1) (2 * k.val + 1)) 3 14 := by
        rw [show pair1_lt.sl.v2167_3 d L tab k r g1 g2 hR hin h9 = addf (pair1_lt.sl.v2131_3 d L tab k r g1 g2 hR hin h9) (pair1_lt.sl.v2166_3 d L tab k r g1 g2 hR hin h9) from rfl, a_v2131_3]
        exact acc_step d L fl tab (wL L).val (2 * t1.val + 1) (2 * k.val + 1) 1 _ hRB ⟨13, by decide⟩ ⟨3, by decide⟩ _ rfl _ hw_v2135_3 _ (k1_off106_form ..) _ _
      have a_v2203_3 : pair1_lt.sl.v2203_3 d L tab k r g1 g2 hR hin h9 = AccMath.accVec (rowF fl tab (wL L).val (2 * t1.val + 1) (2 * k.val + 1)) (offF fl (wL L).val (2 * t1.val + 1) (2 * k.val + 1)) 3 15 := by
        rw [show pair1_lt.sl.v2203_3 d L tab k r g1 g2 hR hin h9 = addf (pair1_lt.sl.v2167_3 d L tab k r g1 g2 hR hin h9) (pair1_lt.sl.v2202_3 d L tab k r g1 g2 hR hin h9) from rfl, a_v2167_3]
        exact acc_step d L fl tab (wL L).val (2 * t1.val + 1) (2 * k.val + 1) 1 _ hRB ⟨14, by decide⟩ ⟨3, by decide⟩ _ rfl _ hw_v2171_3 _ (k1_off107_form ..) _ _
      have a_v2239_3 : pair1_lt.sl.v2239_3 d L tab k r g1 g2 hR hin h9 = AccMath.accVec (rowF fl tab (wL L).val (2 * t1.val + 1) (2 * k.val + 1)) (offF fl (wL L).val (2 * t1.val + 1) (2 * k.val + 1)) 3 16 := by
        rw [show pair1_lt.sl.v2239_3 d L tab k r g1 g2 hR hin h9 = addf (pair1_lt.sl.v2203_3 d L tab k r g1 g2 hR hin h9) (pair1_lt.sl.v2238_3 d L tab k r g1 g2 hR hin h9) from rfl, a_v2203_3]
        exact acc_step d L fl tab (wL L).val (2 * t1.val + 1) (2 * k.val + 1) 1 _ hRB ⟨15, by decide⟩ ⟨3, by decide⟩ _ rfl _ hw_v2207_3 _ (k1_off108_form ..) _ _
      have a_v1699_4 : pair1_lt.sl.v1699_4 d L tab k r g1 g2 hR hin h9 = AccMath.accVec (rowF fl tab (wL L).val (2 * t1.val + 1) (2 * k.val + 1)) (offF fl (wL L).val (2 * t1.val + 1) (2 * k.val + 1)) 3 17 := by
        rw [show pair1_lt.sl.v1699_4 d L tab k r g1 g2 hR hin h9 = addf (pair1_lt.sl.v2239_3 d L tab k r g1 g2 hR hin h9) (pair1_lt.sl.v1698_4 d L tab k r g1 g2 hR hin h9) from rfl, a_v2239_3]
        exact acc_step d L fl tab (wL L).val (2 * t1.val + 1) (2 * k.val + 1) 1 _ hRB ⟨16, by decide⟩ ⟨3, by decide⟩ _ rfl _ hw_v1667_4 _ (k1_off93_form ..) _ _
      have a_v1735_4 : pair1_lt.sl.v1735_4 d L tab k r g1 g2 hR hin h9 = AccMath.accVec (rowF fl tab (wL L).val (2 * t1.val + 1) (2 * k.val + 1)) (offF fl (wL L).val (2 * t1.val + 1) (2 * k.val + 1)) 3 18 := by
        rw [show pair1_lt.sl.v1735_4 d L tab k r g1 g2 hR hin h9 = addf (pair1_lt.sl.v1699_4 d L tab k r g1 g2 hR hin h9) (pair1_lt.sl.v1734_4 d L tab k r g1 g2 hR hin h9) from rfl, a_v1699_4]
        exact acc_step d L fl tab (wL L).val (2 * t1.val + 1) (2 * k.val + 1) 1 _ hRB ⟨17, by decide⟩ ⟨3, by decide⟩ _ rfl _ hw_v1703_4 _ (k1_off94_form ..) _ _
      have a_v1771_4 : pair1_lt.sl.v1771_4 d L tab k r g1 g2 hR hin h9 = AccMath.accVec (rowF fl tab (wL L).val (2 * t1.val + 1) (2 * k.val + 1)) (offF fl (wL L).val (2 * t1.val + 1) (2 * k.val + 1)) 3 19 := by
        rw [show pair1_lt.sl.v1771_4 d L tab k r g1 g2 hR hin h9 = addf (pair1_lt.sl.v1735_4 d L tab k r g1 g2 hR hin h9) (pair1_lt.sl.v1770_4 d L tab k r g1 g2 hR hin h9) from rfl, a_v1735_4]
        exact acc_step d L fl tab (wL L).val (2 * t1.val + 1) (2 * k.val + 1) 1 _ hRB ⟨18, by decide⟩ ⟨3, by decide⟩ _ rfl _ hw_v1739_4 _ (k1_off95_form ..) _ _
      have a_v1807_4 : pair1_lt.sl.v1807_4 d L tab k r g1 g2 hR hin h9 = AccMath.accVec (rowF fl tab (wL L).val (2 * t1.val + 1) (2 * k.val + 1)) (offF fl (wL L).val (2 * t1.val + 1) (2 * k.val + 1)) 3 20 := by
        rw [show pair1_lt.sl.v1807_4 d L tab k r g1 g2 hR hin h9 = addf (pair1_lt.sl.v1771_4 d L tab k r g1 g2 hR hin h9) (pair1_lt.sl.v1806_4 d L tab k r g1 g2 hR hin h9) from rfl, a_v1771_4]
        exact acc_step d L fl tab (wL L).val (2 * t1.val + 1) (2 * k.val + 1) 1 _ hRB ⟨19, by decide⟩ ⟨3, by decide⟩ _ rfl _ hw_v1775_4 _ (k1_off96_form ..) _ _
      have a_v1843_4 : pair1_lt.sl.v1843_4 d L tab k r g1 g2 hR hin h9 = AccMath.accVec (rowF fl tab (wL L).val (2 * t1.val + 1) (2 * k.val + 1)) (offF fl (wL L).val (2 * t1.val + 1) (2 * k.val + 1)) 3 21 := by
        rw [show pair1_lt.sl.v1843_4 d L tab k r g1 g2 hR hin h9 = addf (pair1_lt.sl.v1807_4 d L tab k r g1 g2 hR hin h9) (pair1_lt.sl.v1842_4 d L tab k r g1 g2 hR hin h9) from rfl, a_v1807_4]
        exact acc_step d L fl tab (wL L).val (2 * t1.val + 1) (2 * k.val + 1) 1 _ hRB ⟨20, by decide⟩ ⟨3, by decide⟩ _ rfl _ hw_v1811_4 _ (k1_off97_form ..) _ _
      have a_v1879_4 : pair1_lt.sl.v1879_4 d L tab k r g1 g2 hR hin h9 = AccMath.accVec (rowF fl tab (wL L).val (2 * t1.val + 1) (2 * k.val + 1)) (offF fl (wL L).val (2 * t1.val + 1) (2 * k.val + 1)) 3 22 := by
        rw [show pair1_lt.sl.v1879_4 d L tab k r g1 g2 hR hin h9 = addf (pair1_lt.sl.v1843_4 d L tab k r g1 g2 hR hin h9) (pair1_lt.sl.v1878_4 d L tab k r g1 g2 hR hin h9) from rfl, a_v1843_4]
        exact acc_step d L fl tab (wL L).val (2 * t1.val + 1) (2 * k.val + 1) 1 _ hRB ⟨21, by decide⟩ ⟨3, by decide⟩ _ rfl _ hw_v1847_4 _ (k1_off98_form ..) _ _
      have a_v1915_4 : pair1_lt.sl.v1915_4 d L tab k r g1 g2 hR hin h9 = AccMath.accVec (rowF fl tab (wL L).val (2 * t1.val + 1) (2 * k.val + 1)) (offF fl (wL L).val (2 * t1.val + 1) (2 * k.val + 1)) 3 23 := by
        rw [show pair1_lt.sl.v1915_4 d L tab k r g1 g2 hR hin h9 = addf (pair1_lt.sl.v1879_4 d L tab k r g1 g2 hR hin h9) (pair1_lt.sl.v1914_4 d L tab k r g1 g2 hR hin h9) from rfl, a_v1879_4]
        exact acc_step d L fl tab (wL L).val (2 * t1.val + 1) (2 * k.val + 1) 1 _ hRB ⟨22, by decide⟩ ⟨3, by decide⟩ _ rfl _ hw_v1883_4 _ (k1_off99_form ..) _ _
      have a_v1951_4 : pair1_lt.sl.v1951_4 d L tab k r g1 g2 hR hin h9 = AccMath.accVec (rowF fl tab (wL L).val (2 * t1.val + 1) (2 * k.val + 1)) (offF fl (wL L).val (2 * t1.val + 1) (2 * k.val + 1)) 3 24 := by
        rw [show pair1_lt.sl.v1951_4 d L tab k r g1 g2 hR hin h9 = addf (pair1_lt.sl.v1915_4 d L tab k r g1 g2 hR hin h9) (pair1_lt.sl.v1950_4 d L tab k r g1 g2 hR hin h9) from rfl, a_v1915_4]
        exact acc_step d L fl tab (wL L).val (2 * t1.val + 1) (2 * k.val + 1) 1 _ hRB ⟨23, by decide⟩ ⟨3, by decide⟩ _ rfl _ hw_v1919_4 _ (k1_off100_form ..) _ _
      have a_v1987_4 : pair1_lt.sl.v1987_4 d L tab k r g1 g2 hR hin h9 = AccMath.accVec (rowF fl tab (wL L).val (2 * t1.val + 1) (2 * k.val + 1)) (offF fl (wL L).val (2 * t1.val + 1) (2 * k.val + 1)) 3 25 := by
        rw [show pair1_lt.sl.v1987_4 d L tab k r g1 g2 hR hin h9 = addf (pair1_lt.sl.v1951_4 d L tab k r g1 g2 hR hin h9) (pair1_lt.sl.v1986_4 d L tab k r g1 g2 hR hin h9) from rfl, a_v1951_4]
        exact acc_step d L fl tab (wL L).val (2 * t1.val + 1) (2 * k.val + 1) 1 _ hRB ⟨24, by decide⟩ ⟨3, by decide⟩ _ rfl _ hw_v1955_4 _ (k1_off101_form ..) _ _
      have a_v2023_4 : pair1_lt.sl.v2023_4 d L tab k r g1 g2 hR hin h9 = AccMath.accVec (rowF fl tab (wL L).val (2 * t1.val + 1) (2 * k.val + 1)) (offF fl (wL L).val (2 * t1.val + 1) (2 * k.val + 1)) 3 26 := by
        rw [show pair1_lt.sl.v2023_4 d L tab k r g1 g2 hR hin h9 = addf (pair1_lt.sl.v1987_4 d L tab k r g1 g2 hR hin h9) (pair1_lt.sl.v2022_4 d L tab k r g1 g2 hR hin h9) from rfl, a_v1987_4]
        exact acc_step d L fl tab (wL L).val (2 * t1.val + 1) (2 * k.val + 1) 1 _ hRB ⟨25, by decide⟩ ⟨3, by decide⟩ _ rfl _ hw_v1991_4 _ (k1_off102_form ..) _ _
      have a_v2059_4 : pair1_lt.sl.v2059_4 d L tab k r g1 g2 hR hin h9 = AccMath.accVec (rowF fl tab (wL L).val (2 * t1.val + 1) (2 * k.val + 1)) (offF fl (wL L).val (2 * t1.val + 1) (2 * k.val + 1)) 3 27 := by
        rw [show pair1_lt.sl.v2059_4 d L tab k r g1 g2 hR hin h9 = addf (pair1_lt.sl.v2023_4 d L tab k r g1 g2 hR hin h9) (pair1_lt.sl.v2058_4 d L tab k r g1 g2 hR hin h9) from rfl, a_v2023_4]
        exact acc_step d L fl tab (wL L).val (2 * t1.val + 1) (2 * k.val + 1) 1 _ hRB ⟨26, by decide⟩ ⟨3, by decide⟩ _ rfl _ hw_v2027_4 _ (k1_off103_form ..) _ _
      have a_v2095_4 : pair1_lt.sl.v2095_4 d L tab k r g1 g2 hR hin h9 = AccMath.accVec (rowF fl tab (wL L).val (2 * t1.val + 1) (2 * k.val + 1)) (offF fl (wL L).val (2 * t1.val + 1) (2 * k.val + 1)) 3 28 := by
        rw [show pair1_lt.sl.v2095_4 d L tab k r g1 g2 hR hin h9 = addf (pair1_lt.sl.v2059_4 d L tab k r g1 g2 hR hin h9) (pair1_lt.sl.v2094_4 d L tab k r g1 g2 hR hin h9) from rfl, a_v2059_4]
        exact acc_step d L fl tab (wL L).val (2 * t1.val + 1) (2 * k.val + 1) 1 _ hRB ⟨27, by decide⟩ ⟨3, by decide⟩ _ rfl _ hw_v2063_4 _ (k1_off104_form ..) _ _
      have a_v2131_4 : pair1_lt.sl.v2131_4 d L tab k r g1 g2 hR hin h9 = AccMath.accVec (rowF fl tab (wL L).val (2 * t1.val + 1) (2 * k.val + 1)) (offF fl (wL L).val (2 * t1.val + 1) (2 * k.val + 1)) 3 29 := by
        rw [show pair1_lt.sl.v2131_4 d L tab k r g1 g2 hR hin h9 = addf (pair1_lt.sl.v2095_4 d L tab k r g1 g2 hR hin h9) (pair1_lt.sl.v2130_4 d L tab k r g1 g2 hR hin h9) from rfl, a_v2095_4]
        exact acc_step d L fl tab (wL L).val (2 * t1.val + 1) (2 * k.val + 1) 1 _ hRB ⟨28, by decide⟩ ⟨3, by decide⟩ _ rfl _ hw_v2099_4 _ (k1_off105_form ..) _ _
      have a_v2167_4 : pair1_lt.sl.v2167_4 d L tab k r g1 g2 hR hin h9 = AccMath.accVec (rowF fl tab (wL L).val (2 * t1.val + 1) (2 * k.val + 1)) (offF fl (wL L).val (2 * t1.val + 1) (2 * k.val + 1)) 3 30 := by
        rw [show pair1_lt.sl.v2167_4 d L tab k r g1 g2 hR hin h9 = addf (pair1_lt.sl.v2131_4 d L tab k r g1 g2 hR hin h9) (pair1_lt.sl.v2166_4 d L tab k r g1 g2 hR hin h9) from rfl, a_v2131_4]
        exact acc_step d L fl tab (wL L).val (2 * t1.val + 1) (2 * k.val + 1) 1 _ hRB ⟨29, by decide⟩ ⟨3, by decide⟩ _ rfl _ hw_v2135_4 _ (k1_off106_form ..) _ _
      have a_v2203_4 : pair1_lt.sl.v2203_4 d L tab k r g1 g2 hR hin h9 = AccMath.accVec (rowF fl tab (wL L).val (2 * t1.val + 1) (2 * k.val + 1)) (offF fl (wL L).val (2 * t1.val + 1) (2 * k.val + 1)) 3 31 := by
        rw [show pair1_lt.sl.v2203_4 d L tab k r g1 g2 hR hin h9 = addf (pair1_lt.sl.v2167_4 d L tab k r g1 g2 hR hin h9) (pair1_lt.sl.v2202_4 d L tab k r g1 g2 hR hin h9) from rfl, a_v2167_4]
        exact acc_step d L fl tab (wL L).val (2 * t1.val + 1) (2 * k.val + 1) 1 _ hRB ⟨30, by decide⟩ ⟨3, by decide⟩ _ rfl _ hw_v2171_4 _ (k1_off107_form ..) _ _
      have a_v2239_4 : pair1_lt.sl.v2239_4 d L tab k r g1 g2 hR hin h9 = AccMath.accVec (rowF fl tab (wL L).val (2 * t1.val + 1) (2 * k.val + 1)) (offF fl (wL L).val (2 * t1.val + 1) (2 * k.val + 1)) 3 32 := by
        rw [show pair1_lt.sl.v2239_4 d L tab k r g1 g2 hR hin h9 = addf (pair1_lt.sl.v2203_4 d L tab k r g1 g2 hR hin h9) (pair1_lt.sl.v2238_4 d L tab k r g1 g2 hR hin h9) from rfl, a_v2203_4]
        exact acc_step d L fl tab (wL L).val (2 * t1.val + 1) (2 * k.val + 1) 1 _ hRB ⟨31, by decide⟩ ⟨3, by decide⟩ _ rfl _ hw_v2207_4 _ (k1_off108_form ..) _ _
      have a_v1699_5 : pair1_lt.sl.v1699_5 d L tab k r g1 g2 hR hin h9 = AccMath.accVec (rowF fl tab (wL L).val (2 * t1.val + 1) (2 * k.val + 1)) (offF fl (wL L).val (2 * t1.val + 1) (2 * k.val + 1)) 3 33 := by
        rw [show pair1_lt.sl.v1699_5 d L tab k r g1 g2 hR hin h9 = addf (pair1_lt.sl.v2239_4 d L tab k r g1 g2 hR hin h9) (pair1_lt.sl.v1698_5 d L tab k r g1 g2 hR hin h9) from rfl, a_v2239_4]
        exact acc_step d L fl tab (wL L).val (2 * t1.val + 1) (2 * k.val + 1) 1 _ hRB ⟨32, by decide⟩ ⟨3, by decide⟩ _ rfl _ hw_v1667_5 _ (k1_off93_form ..) _ _
      have a_v1735_5 : pair1_lt.sl.v1735_5 d L tab k r g1 g2 hR hin h9 = AccMath.accVec (rowF fl tab (wL L).val (2 * t1.val + 1) (2 * k.val + 1)) (offF fl (wL L).val (2 * t1.val + 1) (2 * k.val + 1)) 3 34 := by
        rw [show pair1_lt.sl.v1735_5 d L tab k r g1 g2 hR hin h9 = addf (pair1_lt.sl.v1699_5 d L tab k r g1 g2 hR hin h9) (pair1_lt.sl.v1734_5 d L tab k r g1 g2 hR hin h9) from rfl, a_v1699_5]
        exact acc_step d L fl tab (wL L).val (2 * t1.val + 1) (2 * k.val + 1) 1 _ hRB ⟨33, by decide⟩ ⟨3, by decide⟩ _ rfl _ hw_v1703_5 _ (k1_off94_form ..) _ _
      have a_v1771_5 : pair1_lt.sl.v1771_5 d L tab k r g1 g2 hR hin h9 = AccMath.accVec (rowF fl tab (wL L).val (2 * t1.val + 1) (2 * k.val + 1)) (offF fl (wL L).val (2 * t1.val + 1) (2 * k.val + 1)) 3 35 := by
        rw [show pair1_lt.sl.v1771_5 d L tab k r g1 g2 hR hin h9 = addf (pair1_lt.sl.v1735_5 d L tab k r g1 g2 hR hin h9) (pair1_lt.sl.v1770_5 d L tab k r g1 g2 hR hin h9) from rfl, a_v1735_5]
        exact acc_step d L fl tab (wL L).val (2 * t1.val + 1) (2 * k.val + 1) 1 _ hRB ⟨34, by decide⟩ ⟨3, by decide⟩ _ rfl _ hw_v1739_5 _ (k1_off95_form ..) _ _
      have a_v1807_5 : pair1_lt.sl.v1807_5 d L tab k r g1 g2 hR hin h9 = AccMath.accVec (rowF fl tab (wL L).val (2 * t1.val + 1) (2 * k.val + 1)) (offF fl (wL L).val (2 * t1.val + 1) (2 * k.val + 1)) 3 36 := by
        rw [show pair1_lt.sl.v1807_5 d L tab k r g1 g2 hR hin h9 = addf (pair1_lt.sl.v1771_5 d L tab k r g1 g2 hR hin h9) (pair1_lt.sl.v1806_5 d L tab k r g1 g2 hR hin h9) from rfl, a_v1771_5]
        exact acc_step d L fl tab (wL L).val (2 * t1.val + 1) (2 * k.val + 1) 1 _ hRB ⟨35, by decide⟩ ⟨3, by decide⟩ _ rfl _ hw_v1775_5 _ (k1_off96_form ..) _ _
      have a_v1843_5 : pair1_lt.sl.v1843_5 d L tab k r g1 g2 hR hin h9 = AccMath.accVec (rowF fl tab (wL L).val (2 * t1.val + 1) (2 * k.val + 1)) (offF fl (wL L).val (2 * t1.val + 1) (2 * k.val + 1)) 3 37 := by
        rw [show pair1_lt.sl.v1843_5 d L tab k r g1 g2 hR hin h9 = addf (pair1_lt.sl.v1807_5 d L tab k r g1 g2 hR hin h9) (pair1_lt.sl.v1842_5 d L tab k r g1 g2 hR hin h9) from rfl, a_v1807_5]
        exact acc_step d L fl tab (wL L).val (2 * t1.val + 1) (2 * k.val + 1) 1 _ hRB ⟨36, by decide⟩ ⟨3, by decide⟩ _ rfl _ hw_v1811_5 _ (k1_off97_form ..) _ _
      have a_v1879_5 : pair1_lt.sl.v1879_5 d L tab k r g1 g2 hR hin h9 = AccMath.accVec (rowF fl tab (wL L).val (2 * t1.val + 1) (2 * k.val + 1)) (offF fl (wL L).val (2 * t1.val + 1) (2 * k.val + 1)) 3 38 := by
        rw [show pair1_lt.sl.v1879_5 d L tab k r g1 g2 hR hin h9 = addf (pair1_lt.sl.v1843_5 d L tab k r g1 g2 hR hin h9) (pair1_lt.sl.v1878_5 d L tab k r g1 g2 hR hin h9) from rfl, a_v1843_5]
        exact acc_step d L fl tab (wL L).val (2 * t1.val + 1) (2 * k.val + 1) 1 _ hRB ⟨37, by decide⟩ ⟨3, by decide⟩ _ rfl _ hw_v1847_5 _ (k1_off98_form ..) _ _
      have a_v1915_5 : pair1_lt.sl.v1915_5 d L tab k r g1 g2 hR hin h9 = AccMath.accVec (rowF fl tab (wL L).val (2 * t1.val + 1) (2 * k.val + 1)) (offF fl (wL L).val (2 * t1.val + 1) (2 * k.val + 1)) 3 39 := by
        rw [show pair1_lt.sl.v1915_5 d L tab k r g1 g2 hR hin h9 = addf (pair1_lt.sl.v1879_5 d L tab k r g1 g2 hR hin h9) (pair1_lt.sl.v1914_5 d L tab k r g1 g2 hR hin h9) from rfl, a_v1879_5]
        exact acc_step d L fl tab (wL L).val (2 * t1.val + 1) (2 * k.val + 1) 1 _ hRB ⟨38, by decide⟩ ⟨3, by decide⟩ _ rfl _ hw_v1883_5 _ (k1_off99_form ..) _ _
      have a_v1951_5 : pair1_lt.sl.v1951_5 d L tab k r g1 g2 hR hin h9 = AccMath.accVec (rowF fl tab (wL L).val (2 * t1.val + 1) (2 * k.val + 1)) (offF fl (wL L).val (2 * t1.val + 1) (2 * k.val + 1)) 3 40 := by
        rw [show pair1_lt.sl.v1951_5 d L tab k r g1 g2 hR hin h9 = addf (pair1_lt.sl.v1915_5 d L tab k r g1 g2 hR hin h9) (pair1_lt.sl.v1950_5 d L tab k r g1 g2 hR hin h9) from rfl, a_v1915_5]
        exact acc_step d L fl tab (wL L).val (2 * t1.val + 1) (2 * k.val + 1) 1 _ hRB ⟨39, by decide⟩ ⟨3, by decide⟩ _ rfl _ hw_v1919_5 _ (k1_off100_form ..) _ _
      have a_v1987_5 : pair1_lt.sl.v1987_5 d L tab k r g1 g2 hR hin h9 = AccMath.accVec (rowF fl tab (wL L).val (2 * t1.val + 1) (2 * k.val + 1)) (offF fl (wL L).val (2 * t1.val + 1) (2 * k.val + 1)) 3 41 := by
        rw [show pair1_lt.sl.v1987_5 d L tab k r g1 g2 hR hin h9 = addf (pair1_lt.sl.v1951_5 d L tab k r g1 g2 hR hin h9) (pair1_lt.sl.v1986_5 d L tab k r g1 g2 hR hin h9) from rfl, a_v1951_5]
        exact acc_step d L fl tab (wL L).val (2 * t1.val + 1) (2 * k.val + 1) 1 _ hRB ⟨40, by decide⟩ ⟨3, by decide⟩ _ rfl _ hw_v1955_5 _ (k1_off101_form ..) _ _
      have a_v2023_5 : pair1_lt.sl.v2023_5 d L tab k r g1 g2 hR hin h9 = AccMath.accVec (rowF fl tab (wL L).val (2 * t1.val + 1) (2 * k.val + 1)) (offF fl (wL L).val (2 * t1.val + 1) (2 * k.val + 1)) 3 42 := by
        rw [show pair1_lt.sl.v2023_5 d L tab k r g1 g2 hR hin h9 = addf (pair1_lt.sl.v1987_5 d L tab k r g1 g2 hR hin h9) (pair1_lt.sl.v2022_5 d L tab k r g1 g2 hR hin h9) from rfl, a_v1987_5]
        exact acc_step d L fl tab (wL L).val (2 * t1.val + 1) (2 * k.val + 1) 1 _ hRB ⟨41, by decide⟩ ⟨3, by decide⟩ _ rfl _ hw_v1991_5 _ (k1_off102_form ..) _ _
      have a_v2059_5 : pair1_lt.sl.v2059_5 d L tab k r g1 g2 hR hin h9 = AccMath.accVec (rowF fl tab (wL L).val (2 * t1.val + 1) (2 * k.val + 1)) (offF fl (wL L).val (2 * t1.val + 1) (2 * k.val + 1)) 3 43 := by
        rw [show pair1_lt.sl.v2059_5 d L tab k r g1 g2 hR hin h9 = addf (pair1_lt.sl.v2023_5 d L tab k r g1 g2 hR hin h9) (pair1_lt.sl.v2058_5 d L tab k r g1 g2 hR hin h9) from rfl, a_v2023_5]
        exact acc_step d L fl tab (wL L).val (2 * t1.val + 1) (2 * k.val + 1) 1 _ hRB ⟨42, by decide⟩ ⟨3, by decide⟩ _ rfl _ hw_v2027_5 _ (k1_off103_form ..) _ _
      have a_v2095_5 : pair1_lt.sl.v2095_5 d L tab k r g1 g2 hR hin h9 = AccMath.accVec (rowF fl tab (wL L).val (2 * t1.val + 1) (2 * k.val + 1)) (offF fl (wL L).val (2 * t1.val + 1) (2 * k.val + 1)) 3 44 := by
        rw [show pair1_lt.sl.v2095_5 d L tab k r g1 g2 hR hin h9 = addf (pair1_lt.sl.v2059_5 d L tab k r g1 g2 hR hin h9) (pair1_lt.sl.v2094_5 d L tab k r g1 g2 hR hin h9) from rfl, a_v2059_5]
        exact acc_step d L fl tab (wL L).val (2 * t1.val + 1) (2 * k.val + 1) 1 _ hRB ⟨43, by decide⟩ ⟨3, by decide⟩ _ rfl _ hw_v2063_5 _ (k1_off104_form ..) _ _
      have a_v2131_5 : pair1_lt.sl.v2131_5 d L tab k r g1 g2 hR hin h9 = AccMath.accVec (rowF fl tab (wL L).val (2 * t1.val + 1) (2 * k.val + 1)) (offF fl (wL L).val (2 * t1.val + 1) (2 * k.val + 1)) 3 45 := by
        rw [show pair1_lt.sl.v2131_5 d L tab k r g1 g2 hR hin h9 = addf (pair1_lt.sl.v2095_5 d L tab k r g1 g2 hR hin h9) (pair1_lt.sl.v2130_5 d L tab k r g1 g2 hR hin h9) from rfl, a_v2095_5]
        exact acc_step d L fl tab (wL L).val (2 * t1.val + 1) (2 * k.val + 1) 1 _ hRB ⟨44, by decide⟩ ⟨3, by decide⟩ _ rfl _ hw_v2099_5 _ (k1_off105_form ..) _ _
      have a_v2167_5 : pair1_lt.sl.v2167_5 d L tab k r g1 g2 hR hin h9 = AccMath.accVec (rowF fl tab (wL L).val (2 * t1.val + 1) (2 * k.val + 1)) (offF fl (wL L).val (2 * t1.val + 1) (2 * k.val + 1)) 3 46 := by
        rw [show pair1_lt.sl.v2167_5 d L tab k r g1 g2 hR hin h9 = addf (pair1_lt.sl.v2131_5 d L tab k r g1 g2 hR hin h9) (pair1_lt.sl.v2166_5 d L tab k r g1 g2 hR hin h9) from rfl, a_v2131_5]
        exact acc_step d L fl tab (wL L).val (2 * t1.val + 1) (2 * k.val + 1) 1 _ hRB ⟨45, by decide⟩ ⟨3, by decide⟩ _ rfl _ hw_v2135_5 _ (k1_off106_form ..) _ _
      have a_v2203_5 : pair1_lt.sl.v2203_5 d L tab k r g1 g2 hR hin h9 = AccMath.accVec (rowF fl tab (wL L).val (2 * t1.val + 1) (2 * k.val + 1)) (offF fl (wL L).val (2 * t1.val + 1) (2 * k.val + 1)) 3 47 := by
        rw [show pair1_lt.sl.v2203_5 d L tab k r g1 g2 hR hin h9 = addf (pair1_lt.sl.v2167_5 d L tab k r g1 g2 hR hin h9) (pair1_lt.sl.v2202_5 d L tab k r g1 g2 hR hin h9) from rfl, a_v2167_5]
        exact acc_step d L fl tab (wL L).val (2 * t1.val + 1) (2 * k.val + 1) 1 _ hRB ⟨46, by decide⟩ ⟨3, by decide⟩ _ rfl _ hw_v2171_5 _ (k1_off107_form ..) _ _
      have a_v2239_5 : pair1_lt.sl.v2239_5 d L tab k r g1 g2 hR hin h9 = AccMath.accVec (rowF fl tab (wL L).val (2 * t1.val + 1) (2 * k.val + 1)) (offF fl (wL L).val (2 * t1.val + 1) (2 * k.val + 1)) 3 48 := by
        rw [show pair1_lt.sl.v2239_5 d L tab k r g1 g2 hR hin h9 = addf (pair1_lt.sl.v2203_5 d L tab k r g1 g2 hR hin h9) (pair1_lt.sl.v2238_5 d L tab k r g1 g2 hR hin h9) from rfl, a_v2203_5]
        exact acc_step d L fl tab (wL L).val (2 * t1.val + 1) (2 * k.val + 1) 1 _ hRB ⟨47, by decide⟩ ⟨3, by decide⟩ _ rfl _ hw_v2207_5 _ (k1_off108_form ..) _ _
      have a_v1604 : pair1_lt.sl.v1604 d L tab k r g1 g2 hR hin h9 = AccMath.accVec (rowF fl tab (wL L).val (2 * t1.val + 1) (2 * k.val + 1)) (offF fl (wL L).val (2 * t1.val + 1) (2 * k.val + 1)) 3 49 := by
        rw [show pair1_lt.sl.v1604 d L tab k r g1 g2 hR hin h9 = addf (pair1_lt.sl.v2239_5 d L tab k r g1 g2 hR hin h9) (pair1_lt.sl.v1603 d L tab k r g1 g2 hR hin h9) from rfl, a_v2239_5]
        exact acc_step d L fl tab (wL L).val (2 * t1.val + 1) (2 * k.val + 1) 1 _ hRB ⟨48, by decide⟩ ⟨3, by decide⟩ _ rfl _ hw_v1572 _ (k1_off110_form ..) _ _
      have a_v1638 : pair1_lt.sl.v1638 d L tab k r g1 g2 hR hin h9 = AccMath.accVec (rowF fl tab (wL L).val (2 * t1.val + 1) (2 * k.val + 1)) (offF fl (wL L).val (2 * t1.val + 1) (2 * k.val + 1)) 3 50 := by
        rw [show pair1_lt.sl.v1638 d L tab k r g1 g2 hR hin h9 = addf (pair1_lt.sl.v1604 d L tab k r g1 g2 hR hin h9) (pair1_lt.sl.v1637 d L tab k r g1 g2 hR hin h9) from rfl, a_v1604]
        exact acc_step d L fl tab (wL L).val (2 * t1.val + 1) (2 * k.val + 1) 1 _ hRB ⟨49, by decide⟩ ⟨3, by decide⟩ _ rfl _ hw_v1606 _ (k1_off111_form ..) _ _
      have hP_v1527 : ∀ x : S1x1x16.Idx, pair1_lt.sl.v1527 d L tab k r g1 g2 hR hin x = Spec.bagPartial fl tab (128 * (wL L).val + 16 * (2 * t1.val + 1) + (2 * k.val)) (16 * 0 + (x 2).val) 50 := fun x => by
        show shapeCast S1x1x16 (pair1_lt.sl.v1498 d L tab k r g1 g2 hR hin) _ x = _
        rw [a_v1498]
        exact payload_ok fl tab (wL L).val (2 * t1.val + 1) (2 * k.val) ⟨0, by decide⟩ _ x
      have hP_v1532 : ∀ x : S1x1x16.Idx, pair1_lt.sl.v1532 d L tab k r g1 g2 hR hin x = Spec.bagPartial fl tab (128 * (wL L).val + 16 * (2 * t1.val + 1) + (2 * k.val)) (16 * 1 + (x 2).val) 50 := fun x => by
        show shapeCast S1x1x16 (pair1_lt.sl.v1506 d L tab k r g1 g2 hR hin) _ x = _
        rw [a_v1506]
        exact payload_ok fl tab (wL L).val (2 * t1.val + 1) (2 * k.val) ⟨1, by decide⟩ _ x
      have hP_v1537 : ∀ x : S1x1x16.Idx, pair1_lt.sl.v1537 d L tab k r g1 g2 hR hin x = Spec.bagPartial fl tab (128 * (wL L).val + 16 * (2 * t1.val + 1) + (2 * k.val)) (16 * 2 + (x 2).val) 50 := fun x => by
        show shapeCast S1x1x16 (pair1_lt.sl.v1514 d L tab k r g1 g2 hR hin) _ x = _
        rw [a_v1514]
        exact payload_ok fl tab (wL L).val (2 * t1.val + 1) (2 * k.val) ⟨2, by decide⟩ _ x
      have hP_v1542 : ∀ x : S1x1x16.Idx, pair1_lt.sl.v1542 d L tab k r g1 g2 hR hin x = Spec.bagPartial fl tab (128 * (wL L).val + 16 * (2 * t1.val + 1) + (2 * k.val)) (16 * 3 + (x 2).val) 50 := fun x => by
        show shapeCast S1x1x16 (pair1_lt.sl.v1522 d L tab k r g1 g2 hR hin) _ x = _
        rw [a_v1522]
        exact payload_ok fl tab (wL L).val (2 * t1.val + 1) (2 * k.val) ⟨3, by decide⟩ _ x
      have hP_v1643 : ∀ x : S1x1x16.Idx, pair1_lt.sl.v1643 d L tab k r g1 g2 hR hin h9 x = Spec.bagPartial fl tab (128 * (wL L).val + 16 * (2 * t1.val + 1) + (2 * k.val + 1)) (16 * 0 + (x 2).val) 50 := fun x => by
        show shapeCast S1x1x16 (pair1_lt.sl.v1614 d L tab k r g1 g2 hR hin h9) _ x = _
        rw [a_v1614]
        exact payload_ok fl tab (wL L).val (2 * t1.val + 1) (2 * k.val + 1) ⟨0, by decide⟩ _ x
      have hP_v1648 : ∀ x : S1x1x16.Idx, pair1_lt.sl.v1648 d L tab k r g1 g2 hR hin h9 x = Spec.bagPartial fl tab (128 * (wL L).val + 16 * (2 * t1.val + 1) + (2 * k.val + 1)) (16 * 1 + (x 2).val) 50 := fun x => by
        show shapeCast S1x1x16 (pair1_lt.sl.v1622 d L tab k r g1 g2 hR hin h9) _ x = _
        rw [a_v1622]
        exact payload_ok fl tab (wL L).val (2 * t1.val + 1) (2 * k.val + 1) ⟨1, by decide⟩ _ x
      have hP_v1653 : ∀ x : S1x1x16.Idx, pair1_lt.sl.v1653 d L tab k r g1 g2 hR hin h9 x = Spec.bagPartial fl tab (128 * (wL L).val + 16 * (2 * t1.val + 1) + (2 * k.val + 1)) (16 * 2 + (x 2).val) 50 := fun x => by
        show shapeCast S1x1x16 (pair1_lt.sl.v1630 d L tab k r g1 g2 hR hin h9) _ x = _
        rw [a_v1630]
        exact payload_ok fl tab (wL L).val (2 * t1.val + 1) (2 * k.val + 1) ⟨2, by decide⟩ _ x
      have hP_v1658 : ∀ x : S1x1x16.Idx, pair1_lt.sl.v1658 d L tab k r g1 g2 hR hin h9 x = Spec.bagPartial fl tab (128 * (wL L).val + 16 * (2 * t1.val + 1) + (2 * k.val + 1)) (16 * 3 + (x 2).val) 50 := fun x => by
        show shapeCast S1x1x16 (pair1_lt.sl.v1638 d L tab k r g1 g2 hR hin h9) _ x = _
        rw [a_v1638]
        exact payload_ok fl tab (wL L).val (2 * t1.val + 1) (2 * k.val + 1) ⟨3, by decide⟩ _ x
      have hK0 := (WbV_iff_WbK d L fl tab (wL L).val (2 * t1.val + 1) 1 (2 * k.val) wb).mp hwb
      have kA := WbK_bag d L fl tab (wL L).val (2 * t1.val + 1) 1 _ wb hK0 ⟨2 * k.val, by omega⟩ (k1_off85 k) (k1_off86 k) (k1_off87 k) (k1_off88 k)
        (k1_off85_eq k) (k1_off86_eq k) (k1_off87_eq k) (k1_off88_eq k) (k1_off85_inb k) (k1_off86_inb k) (k1_off87_inb k) (k1_off88_inb k) _ _ _ _
        hP_v1527 hP_v1532 hP_v1537 hP_v1542
      have kB := WbK_bag d L fl tab (wL L).val (2 * t1.val + 1) 1 _ _ kA ⟨2 * k.val + 1, by omega⟩ (k1_off112 k) (k1_off113 k) (k1_off114 k) (k1_off115 k)
        (k1_off112_eq k) (k1_off113_eq k) (k1_off114_eq k) (k1_off115_eq k) (k1_off112_inb k) (k1_off113_inb k) (k1_off114_inb k) (k1_off115_inb k) _ _ _ _
        hP_v1643 hP_v1648 hP_v1653 hP_v1658
      rw [WbV_iff_WbK]
      intro g c hg
      have hg2 : g.val < 2 * (k.val + 1) := hg
      refine kB g c ?_
      have hg' : g.val < 2 * k.val ∨ g.val = 2 * k.val ∨ g.val = 2 * k.val + 1 := by omega
      rcases hg' with h | h | h
      · exact .inl (.inl h)
      · exact .inl (.inr (Fin.ext h))
      · exact .inr (Fin.ext h)

end Tile

end Cert.Proof.Bag

end
-- ==== Proof.TilePair1b.lean ====
/-
  One trip of an odd block's pair loop on a vector subcore, the last trip (`k = 7`) of a block that is not the task's last (`t1 < 3`): from what holds before trip `k`
  to what holds before trip `k + 1`.

  The trip waits for the gather of bag `2 k` into slot 0, starts the gather of bag `2 k + 1` into slot 1 (its list in the second
  half of the row-number scratch), sums bag `2 k`'s fifty rows into row `2 k` of slot 1 of the write-back scratch, waits for the
  second gather, starts the gather of the NEXT block's first bag into slot 0 (its list at the first word of the row-number scratch: bag 16 of a block is bag 0 of the next), and sums bag `2 k + 1` into row `2 k + 1`. Each accumulator,
  fifty rows on, is the bag's partial sum of fifty terms at its sixteen columns: row by row, a sixteen-lane load of the
  gathered row at its column offset adds the row's term.
-/
import proofs.«203835_g19404662243951_cont_8to1_399_35_alg».proof.Proof.TilePre
import proofs.«203835_g19404662243951_cont_8to1_399_35_alg».proof.Proof.Pay
import proofs.«203835_g19404662243951_cont_8to1_399_35_alg».proof.Proof.TileChk
import proofs.«203835_g19404662243951_cont_8to1_399_35_alg».proof.Proof.TileMath
import proofs.«203835_g19404662243951_cont_8to1_399_35_alg».proof.Proof.TileInv
import proofs.«203835_g19404662243951_cont_8to1_399_35_alg».proof.Proof.TileInv1
import proofs.«203835_g19404662243951_cont_8to1_399_35_alg».proof.Proof.Gen.KernelIdeal.Skeleton
import proofs.«203835_g19404662243951_cont_8to1_399_35_alg».proof.Proof.TilePairVal
import proofs.«203835_g19404662243951_cont_8to1_399_35_alg».proof.Proof.TileChk1
import Idealize.ShloMosaic.Lib.Tactic

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid1.Coords)

set_option maxHeartbeats 4000000 in
theorem pair1_next (fl : IVec Spec.SFlat 32) (qt : PosShare TreeShare) (tab : FVec F Spec.STab .f32) (O : CellTallies nD τ sig (HIx 1))
    (W0 : Waits sig (HIx 1)) (t1 : Fin k1_t1_loop.trips) (v1407 : BitVec 32) (k : Fin k1_t5_loop.trips) (hk : ¬ k.val < 7) (ht : t1.val < 3) :
    invF d L fl qt tab O W0 (2 * t1.val + 1) k.val ⟨⟩
      ⊢ wp frame (wpE (defs₀ (F := F)) 𝒱₀ (thr d L) none) Set.univ
          (k1_t5_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10 t1 v1407 k ⟨⟩)
          (invF d L fl qt tab O W0 (2 * t1.val + 1) (k.val + 1)) := by
  unfold k1_t5_body
  unfold invF
  iintro ⟨#Hmw', %r, %g1, %g2, %wb, %o, %ho, ⟨%hT, %hR, %ho_eq, %hV⟩, Hg0, H1, Ht, H3, H2, H4, Hg1, %W', %hW', HO⟩
  have hin := hin_of d L g1 hT
  have h9 := cond9_ge k hk
  have h10 := cond10_ge_lt t1 k hk ht
  sl_exec_parts (disch := first | decide | (chk_disch1; exact hR _))
  sl_unroll
  sl_exec_parts (disch := first | decide | (chk_disch1; exact hR _))
  sl_unroll
  sl_exec_parts (disch := first | decide | (chk_disch1; exact hR _))
  sl_step
  have hoff : k1_off91 = lo1 (k.val + 1) := by rw [k1_off91_eq]; unfold lo1; rw [if_neg (by omega)]
  isplitl []; · iexact Hmw'
  iexists _; iexists g1; iexists g2; iexists _; iexists (k1_off91); iexists (k1_off91_inb t1 k h10)
  isplitr; rotate_left
  · isplitl [Hg0]; · iexact Hg0
    isplitl [H1]; · iexact H1
    isplitl [Ht]; · iexact Ht
    isplitl [H3]; · iexact H3
    isplitl [H2]; · iexact H2
    isplitl [H4]; · iexact H4
    isplitl [Hg1]; · iexact Hg1
    iexists (insert (SemLoc.dma cc1_scratch6.sem, (default : HIx 1)) (insert (SemLoc.dma cc1_scratch5.sem, (default : HIx 1)) W')); isplitr
    · ipureintro; intro p hp
      rcases Finset.mem_insert.mp hp with rfl | hp
      · exact .inr rfl
      rcases Finset.mem_insert.mp hp with rfl | hp
      · exact .inr rfl
      · exact hW' p hp
    · iexact HO
  · ipureintro
    refine ⟨hT, hR, hoff, ?_⟩
    obtain ⟨hT1, hR1, hnext, hrows, hwb⟩ := hV
    refine ⟨hT1, hR1, hnext, fun _ => ?_, ?_⟩
    · have hTn := (hnext (by omega)).1
      have hw := words_of_TixV d L fl (wL L).val (2 * t1.val + 1 + 1) 0 0 (by decide) (by decide) g1 hTn k1_off91
        (by rw [k1_off91_eq]; rfl)
      have hland := RowsV_landing0 d L fl tab (by decide) (wL L).val (2 * t1.val + 1 + 1) 0 g1 k1_off91 (k1_off91_inb t1 k h10) hw
        (hin _ _) (View.write (Elt F) (h1M).view r (pair1_next.sl.gather0 d L tab k g1 hin) Finset.univ)
      have h8 : k.val < 8 := lt_of_lt_of_eq k.isLt trips5
      have e : 2 * (k.val + 1) = 16 := by omega
      rw [e]
      intro j c
      rw [blkWord_next]
      exact hland j c
    · skip
      have h8 : k.val < 8 := lt_of_lt_of_eq k.isLt trips5
      have hRA : RowsV d L fl tab (wL L).val (2 * t1.val + 1) (2 * k.val) 0 (View.write (Elt F) (h1M).view r (pair1_next.sl.gather0 d L tab k g1 hin) Finset.univ) :=
        RowsV_keep0 d L fl tab (wL L).val (2 * t1.val + 1) (2 * k.val) r _ (hrows (Or.inl h8))
      have hwB := words_of_TixV d L fl (wL L).val (2 * t1.val + 1) 1 (2 * k.val + 1) (by decide) (by omega) g1 hT1 (k1_off64 k)
        (by rw [k1_off64_eq]; show 128 * k.val + 1088 = 1024 * 1 + 64 * (2 * k.val + 1); omega)
      have hRB1 : RowsV d L fl tab (wL L).val (2 * t1.val + 1) (2 * k.val + 1) 1 (View.write (Elt F) (h1M).view r (pair1_next.sl.gather0 d L tab k g1 hin) Finset.univ) :=
        RowsV_landing1 d L fl tab (by decide) (wL L).val (2 * t1.val + 1) (2 * k.val + 1) g1 (k1_off64 k) (k1_off64_inb k) hwB (hin _ _) r
      have hRB : RowsV d L fl tab (wL L).val (2 * t1.val + 1) (2 * k.val + 1) 1 (View.write (Elt F) (h0M).view (View.write (Elt F) (h1M).view r (pair1_next.sl.gather0 d L tab k g1 hin) Finset.univ) (pair1_next.sl.gather212 d L tab t1 k g1 hin h10) Finset.univ) :=
        RowsV_keep1 d L fl tab (wL L).val (2 * t1.val + 1) (2 * k.val + 1) _ _ hRB1
      have hw_v1667 : pair1_next.sl.v1667 d L k g2 = Spec.tcol (blkWord fl (wL L).val (2 * t1.val + 1) (64 * (2 * k.val) + 0)) := by
        refine (rv_extract d L g2 (k1_off65 k ⟨0, by decide⟩) _ _ 0 (by decide) _ _).trans ?_
        exact rv_word d L fl (wL L).val (2 * t1.val + 1) 1 (2 * k.val) 0 (by decide) (by omega) (by decide) g2 hR1 _
          (by rw [k1_off65_eq]; show 128 * k.val + 16 * 0 + 1024 + 0 = 1024 * 1 + 64 * (2 * k.val) + 0; omega) _
      have hw_v1703 : pair1_next.sl.v1703 d L k g2 = Spec.tcol (blkWord fl (wL L).val (2 * t1.val + 1) (64 * (2 * k.val) + 1)) := by
        refine (rv_extract d L g2 (k1_off65 k ⟨0, by decide⟩) _ _ 1 (by decide) _ _).trans ?_
        exact rv_word d L fl (wL L).val (2 * t1.val + 1) 1 (2 * k.val) 1 (by decide) (by omega) (by decide) g2 hR1 _
          (by rw [k1_off65_eq]; show 128 * k.val + 16 * 0 + 1024 + 1 = 1024 * 1 + 64 * (2 * k.val) + 1; omega) _
      have hw_v1739 : pair1_next.sl.v1739 d L k g2 = Spec.tcol (blkWord fl (wL L).val (2 * t1.val + 1) (64 * (2 * k.val) + 2)) := by
        refine (rv_extract d L g2 (k1_off65 k ⟨0, by decide⟩) _ _ 2 (by decide) _ _).trans ?_
        exact rv_word d L fl (wL L).val (2 * t1.val + 1) 1 (2 * k.val) 2 (by decide) (by omega) (by decide) g2 hR1 _
          (by rw [k1_off65_eq]; show 128 * k.val + 16 * 0 + 1024 + 2 = 1024 * 1 + 64 * (2 * k.val) + 2; omega) _
      have hw_v1775 : pair1_next.sl.v1775 d L k g2 = Spec.tcol (blkWord fl (wL L).val (2 * t1.val + 1) (64 * (2 * k.val) + 3)) := by
        refine (rv_extract d L g2 (k1_off65 k ⟨0, by decide⟩) _ _ 3 (by decide) _ _).trans ?_
        exact rv_word d L fl (wL L).val (2 * t1.val + 1) 1 (2 * k.val) 3 (by decide) (by omega) (by decide) g2 hR1 _
          (by rw [k1_off65_eq]; show 128 * k.val + 16 * 0 + 1024 + 3 = 1024 * 1 + 64 * (2 * k.val) + 3; omega) _
      have hw_v1811 : pair1_next.sl.v1811 d L k g2 = Spec.tcol (blkWord fl (wL L).val (2 * t1.val + 1) (64 * (2 * k.val) + 4)) := by
        refine (rv_extract d L g2 (k1_off65 k ⟨0, by decide⟩) _ _ 4 (by decide) _ _).trans ?_
        exact rv_word d L fl (wL L).val (2 * t1.val + 1) 1 (2 * k.val) 4 (by decide) (by omega) (by decide) g2 hR1 _
          (by rw [k1_off65_eq]; show 128 * k.val + 16 * 0 + 1024 + 4 = 1024 * 1 + 64 * (2 * k.val) + 4; omega) _
      have hw_v1847 : pair1_next.sl.v1847 d L k g2 = Spec.tcol (blkWord fl (wL L).val (2 * t1.val + 1) (64 * (2 * k.val) + 5)) := by
        refine (rv_extract d L g2 (k1_off65 k ⟨0, by decide⟩) _ _ 5 (by decide) _ _).trans ?_
        exact rv_word d L fl (wL L).val (2 * t1.val + 1) 1 (2 * k.val) 5 (by decide) (by omega) (by decide) g2 hR1 _
          (by rw [k1_off65_eq]; show 128 * k.val + 16 * 0 + 1024 + 5 = 1024 * 1 + 64 * (2 * k.val) + 5; omega) _
      have hw_v1883 : pair1_next.sl.v1883 d L k g2 = Spec.tcol (blkWord fl (wL L).val (2 * t1.val + 1) (64 * (2 * k.val) + 6)) := by
        refine (rv_extract d L g2 (k1_off65 k ⟨0, by decide⟩) _ _ 6 (by decide) _ _).trans ?_
        exact rv_word d L fl (wL L).val (2 * t1.val + 1) 1 (2 * k.val) 6 (by decide) (by omega) (by decide) g2 hR1 _
          (by rw [k1_off65_eq]; show 128 * k.val + 16 * 0 + 1024 + 6 = 1024 * 1 + 64 * (2 * k.val) + 6; omega) _
      have hw_v1919 : pair1_next.sl.v1919 d L k g2 = Spec.tcol (blkWord fl (wL L).val (2 * t1.val + 1) (64 * (2 * k.val) + 7)) := by
        refine (rv_extract d L g2 (k1_off65 k ⟨0, by decide⟩) _ _ 7 (by decide) _ _).trans ?_
        exact rv_word d L fl (wL L).val (2 * t1.val + 1) 1 (2 * k.val) 7 (by decide) (by omega) (by decide) g2 hR1 _
          (by rw [k1_off65_eq]; show 128 * k.val + 16 * 0 + 1024 + 7 = 1024 * 1 + 64 * (2 * k.val) + 7; omega) _
      have hw_v1955 : pair1_next.sl.v1955 d L k g2 = Spec.tcol (blkWord fl (wL L).val (2 * t1.val + 1) (64 * (2 * k.val) + 8)) := by
        refine (rv_extract d L g2 (k1_off65 k ⟨0, by decide⟩) _ _ 8 (by decide) _ _).trans ?_
        exact rv_word d L fl (wL L).val (2 * t1.val + 1) 1 (2 * k.val) 8 (by decide) (by omega) (by decide) g2 hR1 _
          (by rw [k1_off65_eq]; show 128 * k.val + 16 * 0 + 1024 + 8 = 1024 * 1 + 64 * (2 * k.val) + 8; omega) _
      have hw_v1991 : pair1_next.sl.v1991 d L k g2 = Spec.tcol (blkWord fl (wL L).val (2 * t1.val + 1) (64 * (2 * k.val) + 9)) := by
        refine (rv_extract d L g2 (k1_off65 k ⟨0, by decide⟩) _ _ 9 (by decide) _ _).trans ?_
        exact rv_word d L fl (wL L).val (2 * t1.val + 1) 1 (2 * k.val) 9 (by decide) (by omega) (by decide) g2 hR1 _
          (by rw [k1_off65_eq]; show 128 * k.val + 16 * 0 + 1024 + 9 = 1024 * 1 + 64 * (2 * k.val) + 9; omega) _
      have hw_v2027 : pair1_next.sl.v2027 d L k g2 = Spec.tcol (blkWord fl (wL L).val (2 * t1.val + 1) (64 * (2 * k.val) + 10)) := by
        refine (rv_extract d L g2 (k1_off65 k ⟨0, by decide⟩) _ _ 10 (by decide) _ _).trans ?_
        exact rv_word d L fl (wL L).val (2 * t1.val + 1) 1 (2 * k.val) 10 (by decide) (by omega) (by decide) g2 hR1 _
          (by rw [k1_off65_eq]; show 128 * k.val + 16 * 0 + 1024 + 10 = 1024 * 1 + 64 * (2 * k.val) + 10; omega) _
      have hw_v2063 : pair1_next.sl.v2063 d L k g2 = Spec.tcol (blkWord fl (wL L).val (2 * t1.val + 1) (64 * (2 * k.val) + 11)) := by
        refine (rv_extract d L g2 (k1_off65 k ⟨0, by decide⟩) _ _ 11 (by decide) _ _).trans ?_
        exact rv_word d L fl (wL L).val (2 * t1.val + 1) 1 (2 * k.val) 11 (by decide) (by omega) (by decide) g2 hR1 _
          (by rw [k1_off65_eq]; show 128 * k.val + 16 * 0 + 1024 + 11 = 1024 * 1 + 64 * (2 * k.val) + 11; omega) _
      have hw_v2099 : pair1_next.sl.v2099 d L k g2 = Spec.tcol (blkWord fl (wL L).val (2 * t1.val + 1) (64 * (2 * k.val) + 12)) := by
        refine (rv_extract d L g2 (k1_off65 k ⟨0, by decide⟩) _ _ 12 (by decide) _ _).trans ?_
        exact rv_word d L fl (wL L).val (2 * t1.val + 1) 1 (2 * k.val) 12 (by decide) (by omega) (by decide) g2 hR1 _
          (by rw [k1_off65_eq]; show 128 * k.val + 16 * 0 + 1024 + 12 = 1024 * 1 + 64 * (2 * k.val) + 12; omega) _
      have hw_v2135 : pair1_next.sl.v2135 d L k g2 = Spec.tcol (blkWord fl (wL L).val (2 * t1.val + 1) (64 * (2 * k.val) + 13)) := by
        refine (rv_extract d L g2 (k1_off65 k ⟨0, by decide⟩) _ _ 13 (by decide) _ _).trans ?_
        exact rv_word d L fl (wL L).val (2 * t1.val + 1) 1 (2 * k.val) 13 (by decide) (by omega) (by decide) g2 hR1 _
          (by rw [k1_off65_eq]; show 128 * k.val + 16 * 0 + 1024 + 13 = 1024 * 1 + 64 * (2 * k.val) + 13; omega) _
      have hw_v2171 : pair1_next.sl.v2171 d L k g2 = Spec.tcol (blkWord fl (wL L).val (2 * t1.val + 1) (64 * (2 * k.val) + 14)) := by
        refine (rv_extract d L g2 (k1_off65 k ⟨0, by decide⟩) _ _ 14 (by decide) _ _).trans ?_
        exact rv_word d L fl (wL L).val (2 * t1.val + 1) 1 (2 * k.val) 14 (by decide) (by omega) (by decide) g2 hR1 _
          (by rw [k1_off65_eq]; show 128 * k.val + 16 * 0 + 1024 + 14 = 1024 * 1 + 64 * (2 * k.val) + 14; omega) _
      have hw_v2207 : pair1_next.sl.v2207 d L k g2 = Spec.tcol (blkWord fl (wL L).val (2 * t1.val + 1) (64 * (2 * k.val) + 15)) := by
        refine (rv_extract d L g2 (k1_off65 k ⟨0, by decide⟩) _ _ 15 (by decide) _ _).trans ?_
        exact rv_word d L fl (wL L).val (2 * t1.val + 1) 1 (2 * k.val) 15 (by decide) (by omega) (by decide) g2 hR1 _
          (by rw [k1_off65_eq]; show 128 * k.val + 16 * 0 + 1024 + 15 = 1024 * 1 + 64 * (2 * k.val) + 15; omega) _
      have hw_v1667_1 : pair1_next.sl.v1667_1 d L k g2 = Spec.tcol (blkWord fl (wL L).val (2 * t1.val + 1) (64 * (2 * k.val) + 16)) := by
        refine (rv_extract d L g2 (k1_off65 k ⟨1, by decide⟩) _ _ 0 (by decide) _ _).trans ?_
        exact rv_word d L fl (wL L).val (2 * t1.val + 1) 1 (2 * k.val) 16 (by decide) (by omega) (by decide) g2 hR1 _
          (by rw [k1_off65_eq]; show 128 * k.val + 16 * 1 + 1024 + 0 = 1024 * 1 + 64 * (2 * k.val) + 16; omega) _
      have hw_v1703_1 : pair1_next.sl.v1703_1 d L k g2 = Spec.tcol (blkWord fl (wL L).val (2 * t1.val + 1) (64 * (2 * k.val) + 17)) := by
        refine (rv_extract d L g2 (k1_off65 k ⟨1, by decide⟩) _ _ 1 (by decide) _ _).trans ?_
        exact rv_word d L fl (wL L).val (2 * t1.val + 1) 1 (2 * k.val) 17 (by decide) (by omega) (by decide) g2 hR1 _
          (by rw [k1_off65_eq]; show 128 * k.val + 16 * 1 + 1024 + 1 = 1024 * 1 + 64 * (2 * k.val) + 17; omega) _
      have hw_v1739_1 : pair1_next.sl.v1739_1 d L k g2 = Spec.tcol (blkWord fl (wL L).val (2 * t1.val + 1) (64 * (2 * k.val) + 18)) := by
        refine (rv_extract d L g2 (k1_off65 k ⟨1, by decide⟩) _ _ 2 (by decide) _ _).trans ?_
        exact rv_word d L fl (wL L).val (2 * t1.val + 1) 1 (2 * k.val) 18 (by decide) (by omega) (by decide) g2 hR1 _
          (by rw [k1_off65_eq]; show 128 * k.val + 16 * 1 + 1024 + 2 = 1024 * 1 + 64 * (2 * k.val) + 18; omega) _
      have hw_v1775_1 : pair1_next.sl.v1775_1 d L k g2 = Spec.tcol (blkWord fl (wL L).val (2 * t1.val + 1) (64 * (2 * k.val) + 19)) := by
        refine (rv_extract d L g2 (k1_off65 k ⟨1, by decide⟩) _ _ 3 (by decide) _ _).trans ?_
        exact rv_word d L fl (wL L).val (2 * t1.val + 1) 1 (2 * k.val) 19 (by decide) (by omega) (by decide) g2 hR1 _
          (by rw [k1_off65_eq]; show 128 * k.val + 16 * 1 + 1024 + 3 = 1024 * 1 + 64 * (2 * k.val) + 19; omega) _
      have hw_v1811_1 : pair1_next.sl.v1811_1 d L k g2 = Spec.tcol (blkWord fl (wL L).val (2 * t1.val + 1) (64 * (2 * k.val) + 20)) := by
        refine (rv_extract d L g2 (k1_off65 k ⟨1, by decide⟩) _ _ 4 (by decide) _ _).trans ?_
        exact rv_word d L fl (wL L).val (2 * t1.val + 1) 1 (2 * k.val) 20 (by decide) (by omega) (by decide) g2 hR1 _
          (by rw [k1_off65_eq]; show 128 * k.val + 16 * 1 + 1024 + 4 = 1024 * 1 + 64 * (2 * k.val) + 20; omega) _
      have hw_v1847_1 : pair1_next.sl.v1847_1 d L k g2 = Spec.tcol (blkWord fl (wL L).val (2 * t1.val + 1) (64 * (2 * k.val) + 21)) := by
        refine (rv_extract d L g2 (k1_off65 k ⟨1, by decide⟩) _ _ 5 (by decide) _ _).trans ?_
        exact rv_word d L fl (wL L).val (2 * t1.val + 1) 1 (2 * k.val) 21 (by decide) (by omega) (by decide) g2 hR1 _
          (by rw [k1_off65_eq]; show 128 * k.val + 16 * 1 + 1024 + 5 = 1024 * 1 + 64 * (2 * k.val) + 21; omega) _
      have hw_v1883_1 : pair1_next.sl.v1883_1 d L k g2 = Spec.tcol (blkWord fl (wL L).val (2 * t1.val + 1) (64 * (2 * k.val) + 22)) := by
        refine (rv_extract d L g2 (k1_off65 k ⟨1, by decide⟩) _ _ 6 (by decide) _ _).trans ?_
        exact rv_word d L fl (wL L).val (2 * t1.val + 1) 1 (2 * k.val) 22 (by decide) (by omega) (by decide) g2 hR1 _
          (by rw [k1_off65_eq]; show 128 * k.val + 16 * 1 + 1024 + 6 = 1024 * 1 + 64 * (2 * k.val) + 22; omega) _
      have hw_v1919_1 : pair1_next.sl.v1919_1 d L k g2 = Spec.tcol (blkWord fl (wL L).val (2 * t1.val + 1) (64 * (2 * k.val) + 23)) := by
        refine (rv_extract d L g2 (k1_off65 k ⟨1, by decide⟩) _ _ 7 (by decide) _ _).trans ?_
        exact rv_word d L fl (wL L).val (2 * t1.val + 1) 1 (2 * k.val) 23 (by decide) (by omega) (by decide) g2 hR1 _
          (by rw [k1_off65_eq]; show 128 * k.val + 16 * 1 + 1024 + 7 = 1024 * 1 + 64 * (2 * k.val) + 23; omega) _
      have hw_v1955_1 : pair1_next.sl.v1955_1 d L k g2 = Spec.tcol (blkWord fl (wL L).val (2 * t1.val + 1) (64 * (2 * k.val) + 24)) := by
        refine (rv_extract d L g2 (k1_off65 k ⟨1, by decide⟩) _ _ 8 (by decide) _ _).trans ?_
        exact rv_word d L fl (wL L).val (2 * t1.val + 1) 1 (2 * k.val) 24 (by decide) (by omega) (by decide) g2 hR1 _
          (by rw [k1_off65_eq]; show 128 * k.val + 16 * 1 + 1024 + 8 = 1024 * 1 + 64 * (2 * k.val) + 24; omega) _
      have hw_v1991_1 : pair1_next.sl.v1991_1 d L k g2 = Spec.tcol (blkWord fl (wL L).val (2 * t1.val + 1) (64 * (2 * k.val) + 25)) := by
        refine (rv_extract d L g2 (k1_off65 k ⟨1, by decide⟩) _ _ 9 (by decide) _ _).trans ?_
        exact rv_word d L fl (wL L).val (2 * t1.val + 1) 1 (2 * k.val) 25 (by decide) (by omega) (by decide) g2 hR1 _
          (by rw [k1_off65_eq]; show 128 * k.val + 16 * 1 + 1024 + 9 = 1024 * 1 + 64 * (2 * k.val) + 25; omega) _
      have hw_v2027_1 : pair1_next.sl.v2027_1 d L k g2 = Spec.tcol (blkWord fl (wL L).val (2 * t1.val + 1) (64 * (2 * k.val) + 26)) := by
        refine (rv_extract d L g2 (k1_off65 k ⟨1, by decide⟩) _ _ 10 (by decide) _ _).trans ?_
        exact rv_word d L fl (wL L).val (2 * t1.val + 1) 1 (2 * k.val) 26 (by decide) (by omega) (by decide) g2 hR1 _
          (by rw [k1_off65_eq]; show 128 * k.val + 16 * 1 + 1024 + 10 = 1024 * 1 + 64 * (2 * k.val) + 26; omega) _
      have hw_v2063_1 : pair1_next.sl.v2063_1 d L k g2 = Spec.tcol (blkWord fl (wL L).val (2 * t1.val + 1) (64 * (2 * k.val) + 27)) := by
        refine (rv_extract d L g2 (k1_off65 k ⟨1, by decide⟩) _ _ 11 (by decide) _ _).trans ?_
        exact rv_word d L fl (wL L).val (2 * t1.val + 1) 1 (2 * k.val) 27 (by decide) (by omega) (by decide) g2 hR1 _
          (by rw [k1_off65_eq]; show 128 * k.val + 16 * 1 + 1024 + 11 = 1024 * 1 + 64 * (2 * k.val) + 27; omega) _
      have hw_v2099_1 : pair1_next.sl.v2099_1 d L k g2 = Spec.tcol (blkWord fl (wL L).val (2 * t1.val + 1) (64 * (2 * k.val) + 28)) := by
        refine (rv_extract d L g2 (k1_off65 k ⟨1, by decide⟩) _ _ 12 (by decide) _ _).trans ?_
        exact rv_word d L fl (wL L).val (2 * t1.val + 1) 1 (2 * k.val) 28 (by decide) (by omega) (by decide) g2 hR1 _
          (by rw [k1_off65_eq]; show 128 * k.val + 16 * 1 + 1024 + 12 = 1024 * 1 + 64 * (2 * k.val) + 28; omega) _
      have hw_v2135_1 : pair1_next.sl.v2135_1 d L k g2 = Spec.tcol (blkWord fl (wL L).val (2 * t1.val + 1) (64 * (2 * k.val) + 29)) := by
        refine (rv_extract d L g2 (k1_off65 k ⟨1, by decide⟩) _ _ 13 (by decide) _ _).trans ?_
        exact rv_word d L fl (wL L).val (2 * t1.val + 1) 1 (2 * k.val) 29 (by decide) (by omega) (by decide) g2 hR1 _
          (by rw [k1_off65_eq]; show 128 * k.val + 16 * 1 + 1024 + 13 = 1024 * 1 + 64 * (2 * k.val) + 29; omega) _
      have hw_v2171_1 : pair1_next.sl.v2171_1 d L k g2 = Spec.tcol (blkWord fl (wL L).val (2 * t1.val + 1) (64 * (2 * k.val) + 30)) := by
        refine (rv_extract d L g2 (k1_off65 k ⟨1, by decide⟩) _ _ 14 (by decide) _ _).trans ?_
        exact rv_word d L fl (wL L).val (2 * t1.val + 1) 1 (2 * k.val) 30 (by decide) (by omega) (by decide) g2 hR1 _
          (by rw [k1_off65_eq]; show 128 * k.val + 16 * 1 + 1024 + 14 = 1024 * 1 + 64 * (2 * k.val) + 30; omega) _
      have hw_v2207_1 : pair1_next.sl.v2207_1 d L k g2 = Spec.tcol (blkWord fl (wL L).val (2 * t1.val + 1) (64 * (2 * k.val) + 31)) := by
        refine (rv_extract d L g2 (k1_off65 k ⟨1, by decide⟩) _ _ 15 (by decide) _ _).trans ?_
        exact rv_word d L fl (wL L).val (2 * t1.val + 1) 1 (2 * k.val) 31 (by decide) (by omega) (by decide) g2 hR1 _
          (by rw [k1_off65_eq]; show 128 * k.val + 16 * 1 + 1024 + 15 = 1024 * 1 + 64 * (2 * k.val) + 31; omega) _
      have hw_v1667_2 : pair1_next.sl.v1667_2 d L k g2 = Spec.tcol (blkWord fl (wL L).val (2 * t1.val + 1) (64 * (2 * k.val) + 32)) := by
        refine (rv_extract d L g2 (k1_off65 k ⟨2, by decide⟩) _ _ 0 (by decide) _ _).trans ?_
        exact rv_word d L fl (wL L).val (2 * t1.val + 1) 1 (2 * k.val) 32 (by decide) (by omega) (by decide) g2 hR1 _
          (by rw [k1_off65_eq]; show 128 * k.val + 16 * 2 + 1024 + 0 = 1024 * 1 + 64 * (2 * k.val) + 32; omega) _
      have hw_v1703_2 : pair1_next.sl.v1703_2 d L k g2 = Spec.tcol (blkWord fl (wL L).val (2 * t1.val + 1) (64 * (2 * k.val) + 33)) := by
        refine (rv_extract d L g2 (k1_off65 k ⟨2, by decide⟩) _ _ 1 (by decide) _ _).trans ?_
        exact rv_word d L fl (wL L).val (2 * t1.val + 1) 1 (2 * k.val) 33 (by decide) (by omega) (by decide) g2 hR1 _
          (by rw [k1_off65_eq]; show 128 * k.val + 16 * 2 + 1024 + 1 = 1024 * 1 + 64 * (2 * k.val) + 33; omega) _
      have hw_v1739_2 : pair1_next.sl.v1739_2 d L k g2 = Spec.tcol (blkWord fl (wL L).val (2 * t1.val + 1) (64 * (2 * k.val) + 34)) := by
        refine (rv_extract d L g2 (k1_off65 k ⟨2, by decide⟩) _ _ 2 (by decide) _ _).trans ?_
        exact rv_word d L fl (wL L).val (2 * t1.val + 1) 1 (2 * k.val) 34 (by decide) (by omega) (by decide) g2 hR1 _
          (by rw [k1_off65_eq]; show 128 * k.val + 16 * 2 + 1024 + 2 = 1024 * 1 + 64 * (2 * k.val) + 34; omega) _
      have hw_v1775_2 : pair1_next.sl.v1775_2 d L k g2 = Spec.tcol (blkWord fl (wL L).val (2 * t1.val + 1) (64 * (2 * k.val) + 35)) := by
        refine (rv_extract d L g2 (k1_off65 k ⟨2, by decide⟩) _ _ 3 (by decide) _ _).trans ?_
        exact rv_word d L fl (wL L).val (2 * t1.val + 1) 1 (2 * k.val) 35 (by decide) (by omega) (by decide) g2 hR1 _
          (by rw [k1_off65_eq]; show 128 * k.val + 16 * 2 + 1024 + 3 = 1024 * 1 + 64 * (2 * k.val) + 35; omega) _
      have hw_v1811_2 : pair1_next.sl.v1811_2 d L k g2 = Spec.tcol (blkWord fl (wL L).val (2 * t1.val + 1) (64 * (2 * k.val) + 36)) := by
        refine (rv_extract d L g2 (k1_off65 k ⟨2, by decide⟩) _ _ 4 (by decide) _ _).trans ?_
        exact rv_word d L fl (wL L).val (2 * t1.val + 1) 1 (2 * k.val) 36 (by decide) (by omega) (by decide) g2 hR1 _
          (by rw [k1_off65_eq]; show 128 * k.val + 16 * 2 + 1024 + 4 = 1024 * 1 + 64 * (2 * k.val) + 36; omega) _
      have hw_v1847_2 : pair1_next.sl.v1847_2 d L k g2 = Spec.tcol (blkWord fl (wL L).val (2 * t1.val + 1) (64 * (2 * k.val) + 37)) := by
        refine (rv_extract d L g2 (k1_off65 k ⟨2, by decide⟩) _ _ 5 (by decide) _ _).trans ?_
        exact rv_word d L fl (wL L).val (2 * t1.val + 1) 1 (2 * k.val) 37 (by decide) (by omega) (by decide) g2 hR1 _
          (by rw [k1_off65_eq]; show 128 * k.val + 16 * 2 + 1024 + 5 = 1024 * 1 + 64 * (2 * k.val) + 37; omega) _
      have hw_v1883_2 : pair1_next.sl.v1883_2 d L k g2 = Spec.tcol (blkWord fl (wL L).val (2 * t1.val + 1) (64 * (2 * k.val) + 38)) := by
        refine (rv_extract d L g2 (k1_off65 k ⟨2, by decide⟩) _ _ 6 (by decide) _ _).trans ?_
        exact rv_word d L fl (wL L).val (2 * t1.val + 1) 1 (2 * k.val) 38 (by decide) (by omega) (by decide) g2 hR1 _
          (by rw [k1_off65_eq]; show 128 * k.val + 16 * 2 + 1024 + 6 = 1024 * 1 + 64 * (2 * k.val) + 38; omega) _
      have hw_v1919_2 : pair1_next.sl.v1919_2 d L k g2 = Spec.tcol (blkWord fl (wL L).val (2 * t1.val + 1) (64 * (2 * k.val) + 39)) := by
        refine (rv_extract d L g2 (k1_off65 k ⟨2, by decide⟩) _ _ 7 (by decide) _ _).trans ?_
        exact rv_word d L fl (wL L).val (2 * t1.val + 1) 1 (2 * k.val) 39 (by decide) (by omega) (by decide) g2 hR1 _
          (by rw [k1_off65_eq]; show 128 * k.val + 16 * 2 + 1024 + 7 = 1024 * 1 + 64 * (2 * k.val) + 39; omega) _
      have hw_v1955_2 : pair1_next.sl.v1955_2 d L k g2 = Spec.tcol (blkWord fl (wL L).val (2 * t1.val + 1) (64 * (2 * k.val) + 40)) := by
        refine (rv_extract d L g2 (k1_off65 k ⟨2, by decide⟩) _ _ 8 (by decide) _ _).trans ?_
        exact rv_word d L fl (wL L).val (2 * t1.val + 1) 1 (2 * k.val) 40 (by decide) (by omega) (by decide) g2 hR1 _
          (by rw [k1_off65_eq]; show 128 * k.val + 16 * 2 + 1024 + 8 = 1024 * 1 + 64 * (2 * k.val) + 40; omega) _
      have hw_v1991_2 : pair1_next.sl.v1991_2 d L k g2 = Spec.tcol (blkWord fl (wL L).val (2 * t1.val + 1) (64 * (2 * k.val) + 41)) := by
        refine (rv_extract d L g2 (k1_off65 k ⟨2, by decide⟩) _ _ 9 (by decide) _ _).trans ?_
        exact rv_word d L fl (wL L).val (2 * t1.val + 1) 1 (2 * k.val) 41 (by decide) (by omega) (by decide) g2 hR1 _
          (by rw [k1_off65_eq]; show 128 * k.val + 16 * 2 + 1024 + 9 = 1024 * 1 + 64 * (2 * k.val) + 41; omega) _
      have hw_v2027_2 : pair1_next.sl.v2027_2 d L k g2 = Spec.tcol (blkWord fl (wL L).val (2 * t1.val + 1) (64 * (2 * k.val) + 42)) := by
        refine (rv_extract d L g2 (k1_off65 k ⟨2, by decide⟩) _ _ 10 (by decide) _ _).trans ?_
        exact rv_word d L fl (wL L).val (2 * t1.val + 1) 1 (2 * k.val) 42 (by decide) (by omega) (by decide) g2 hR1 _
          (by rw [k1_off65_eq]; show 128 * k.val + 16 * 2 + 1024 + 10 = 1024 * 1 + 64 * (2 * k.val) + 42; omega) _
      have hw_v2063_2 : pair1_next.sl.v2063_2 d L k g2 = Spec.tcol (blkWord fl (wL L).val (2 * t1.val + 1) (64 * (2 * k.val) + 43)) := by
        refine (rv_extract d L g2 (k1_off65 k ⟨2, by decide⟩) _ _ 11 (by decide) _ _).trans ?_
        exact rv_word d L fl (wL L).val (2 * t1.val + 1) 1 (2 * k.val) 43 (by decide) (by omega) (by decide) g2 hR1 _
          (by rw [k1_off65_eq]; show 128 * k.val + 16 * 2 + 1024 + 11 = 1024 * 1 + 64 * (2 * k.val) + 43; omega) _
      have hw_v2099_2 : pair1_next.sl.v2099_2 d L k g2 = Spec.tcol (blkWord fl (wL L).val (2 * t1.val + 1) (64 * (2 * k.val) + 44)) := by
        refine (rv_extract d L g2 (k1_off65 k ⟨2, by decide⟩) _ _ 12 (by decide) _ _).trans ?_
        exact rv_word d L fl (wL L).val (2 * t1.val + 1) 1 (2 * k.val) 44 (by decide) (by omega) (by decide) g2 hR1 _
          (by rw [k1_off65_eq]; show 128 * k.val + 16 * 2 + 1024 + 12 = 1024 * 1 + 64 * (2 * k.val) + 44; omega) _
      have hw_v2135_2 : pair1_next.sl.v2135_2 d L k g2 = Spec.tcol (blkWord fl (wL L).val (2 * t1.val + 1) (64 * (2 * k.val) + 45)) := by
        refine (rv_extract d L g2 (k1_off65 k ⟨2, by decide⟩) _ _ 13 (by decide) _ _).trans ?_
        exact rv_word d L fl (wL L).val (2 * t1.val + 1) 1 (2 * k.val) 45 (by decide) (by omega) (by decide) g2 hR1 _
          (by rw [k1_off65_eq]; show 128 * k.val + 16 * 2 + 1024 + 13 = 1024 * 1 + 64 * (2 * k.val) + 45; omega) _
      have hw_v2171_2 : pair1_next.sl.v2171_2 d L k g2 = Spec.tcol (blkWord fl (wL L).val (2 * t1.val + 1) (64 * (2 * k.val) + 46)) := by
        refine (rv_extract d L g2 (k1_off65 k ⟨2, by decide⟩) _ _ 14 (by decide) _ _).trans ?_
        exact rv_word d L fl (wL L).val (2 * t1.val + 1) 1 (2 * k.val) 46 (by decide) (by omega) (by decide) g2 hR1 _
          (by rw [k1_off65_eq]; show 128 * k.val + 16 * 2 + 1024 + 14 = 1024 * 1 + 64 * (2 * k.val) + 46; omega) _
      have hw_v2207_2 : pair1_next.sl.v2207_2 d L k g2 = Spec.tcol (blkWord fl (wL L).val (2 * t1.val + 1) (64 * (2 * k.val) + 47)) := by
        refine (rv_extract d L g2 (k1_off65 k ⟨2, by decide⟩) _ _ 15 (by decide) _ _).trans ?_
        exact rv_word d L fl (wL L).val (2 * t1.val + 1) 1 (2 * k.val) 47 (by decide) (by omega) (by decide) g2 hR1 _
          (by rw [k1_off65_eq]; show 128 * k.val + 16 * 2 + 1024 + 15 = 1024 * 1 + 64 * (2 * k.val) + 47; omega) _
      have hw_v1456 : pair1_next.sl.v1456 d L k g2 = Spec.tcol (blkWord fl (wL L).val (2 * t1.val + 1) (64 * (2 * k.val) + 48)) := by
        refine (rv_extract d L g2 (k1_off82 k) _ _ 0 (by decide) _ _).trans ?_
        exact rv_word d L fl (wL L).val (2 * t1.val + 1) 1 (2 * k.val) 48 (by decide) (by omega) (by decide) g2 hR1 _
          (by rw [k1_off82_eq]; show 128 * k.val + 1072 + 0 = 1024 * 1 + 64 * (2 * k.val) + 48; omega) _
      have hw_v1490 : pair1_next.sl.v1490 d L k g2 = Spec.tcol (blkWord fl (wL L).val (2 * t1.val + 1) (64 * (2 * k.val) + 49)) := by
        refine (rv_extract d L g2 (k1_off82 k) _ _ 1 (by decide) _ _).trans ?_
        exact rv_word d L fl (wL L).val (2 * t1.val + 1) 1 (2 * k.val) 49 (by decide) (by omega) (by decide) g2 hR1 _
          (by rw [k1_off82_eq]; show 128 * k.val + 1072 + 1 = 1024 * 1 + 64 * (2 * k.val) + 49; omega) _
      have hw_v1667_3 : pair1_next.sl.v1667_3 d L k g2 = Spec.tcol (blkWord fl (wL L).val (2 * t1.val + 1) (64 * (2 * k.val + 1) + 0)) := by
        refine (rv_extract d L g2 (k1_off92 k ⟨0, by decide⟩) _ _ 0 (by decide) _ _).trans ?_
        exact rv_word d L fl (wL L).val (2 * t1.val + 1) 1 (2 * k.val + 1) 0 (by decide) (by omega) (by decide) g2 hR1 _
          (by rw [k1_off92_eq]; show 128 * k.val + 16 * 0 + 1088 + 0 = 1024 * 1 + 64 * (2 * k.val + 1) + 0; omega) _
      have hw_v1703_3 : pair1_next.sl.v1703_3 d L k g2 = Spec.tcol (blkWord fl (wL L).val (2 * t1.val + 1) (64 * (2 * k.val + 1) + 1)) := by
        refine (rv_extract d L g2 (k1_off92 k ⟨0, by decide⟩) _ _ 1 (by decide) _ _).trans ?_
        exact rv_word d L fl (wL L).val (2 * t1.val + 1) 1 (2 * k.val + 1) 1 (by decide) (by omega) (by decide) g2 hR1 _
          (by rw [k1_off92_eq]; show 128 * k.val + 16 * 0 + 1088 + 1 = 1024 * 1 + 64 * (2 * k.val + 1) + 1; omega) _
      have hw_v1739_3 : pair1_next.sl.v1739_3 d L k g2 = Spec.tcol (blkWord fl (wL L).val (2 * t1.val + 1) (64 * (2 * k.val + 1) + 2)) := by
        refine (rv_extract d L g2 (k1_off92 k ⟨0, by decide⟩) _ _ 2 (by decide) _ _).trans ?_
        exact rv_word d L fl (wL L).val (2 * t1.val + 1) 1 (2 * k.val + 1) 2 (by decide) (by omega) (by decide) g2 hR1 _
          (by rw [k1_off92_eq]; show 128 * k.val + 16 * 0 + 1088 + 2 = 1024 * 1 + 64 * (2 * k.val + 1) + 2; omega) _
      have hw_v1775_3 : pair1_next.sl.v1775_3 d L k g2 = Spec.tcol (blkWord fl (wL L).val (2 * t1.val + 1) (64 * (2 * k.val + 1) + 3)) := by
        refine (rv_extract d L g2 (k1_off92 k ⟨0, by decide⟩) _ _ 3 (by decide) _ _).trans ?_
        exact rv_word d L fl (wL L).val (2 * t1.val + 1) 1 (2 * k.val + 1) 3 (by decide) (by omega) (by decide) g2 hR1 _
          (by rw [k1_off92_eq]; show 128 * k.val + 16 * 0 + 1088 + 3 = 1024 * 1 + 64 * (2 * k.val + 1) + 3; omega) _
      have hw_v1811_3 : pair1_next.sl.v1811_3 d L k g2 = Spec.tcol (blkWord fl (wL L).val (2 * t1.val + 1) (64 * (2 * k.val + 1) + 4)) := by
        refine (rv_extract d L g2 (k1_off92 k ⟨0, by decide⟩) _ _ 4 (by decide) _ _).trans ?_
        exact rv_word d L fl (wL L).val (2 * t1.val + 1) 1 (2 * k.val + 1) 4 (by decide) (by omega) (by decide) g2 hR1 _
          (by rw [k1_off92_eq]; show 128 * k.val + 16 * 0 + 1088 + 4 = 1024 * 1 + 64 * (2 * k.val + 1) + 4; omega) _
      have hw_v1847_3 : pair1_next.sl.v1847_3 d L k g2 = Spec.tcol (blkWord fl (wL L).val (2 * t1.val + 1) (64 * (2 * k.val + 1) + 5)) := by
        refine (rv_extract d L g2 (k1_off92 k ⟨0, by decide⟩) _ _ 5 (by decide) _ _).trans ?_
        exact rv_word d L fl (wL L).val (2 * t1.val + 1) 1 (2 * k.val + 1) 5 (by decide) (by omega) (by decide) g2 hR1 _
          (by rw [k1_off92_eq]; show 128 * k.val + 16 * 0 + 1088 + 5 = 1024 * 1 + 64 * (2 * k.val + 1) + 5; omega) _
      have hw_v1883_3 : pair1_next.sl.v1883_3 d L k g2 = Spec.tcol (blkWord fl (wL L).val (2 * t1.val + 1) (64 * (2 * k.val + 1) + 6)) := by
        refine (rv_extract d L g2 (k1_off92 k ⟨0, by decide⟩) _ _ 6 (by decide) _ _).trans ?_
        exact rv_word d L fl (wL L).val (2 * t1.val + 1) 1 (2 * k.val + 1) 6 (by decide) (by omega) (by decide) g2 hR1 _
          (by rw [k1_off92_eq]; show 128 * k.val + 16 * 0 + 1088 + 6 = 1024 * 1 + 64 * (2 * k.val + 1) + 6; omega) _
      have hw_v1919_3 : pair1_next.sl.v1919_3 d L k g2 = Spec.tcol (blkWord fl (wL L).val (2 * t1.val + 1) (64 * (2 * k.val + 1) + 7)) := by
        refine (rv_extract d L g2 (k1_off92 k ⟨0, by decide⟩) _ _ 7 (by decide) _ _).trans ?_
        exact rv_word d L fl (wL L).val (2 * t1.val + 1) 1 (2 * k.val + 1) 7 (by decide) (by omega) (by decide) g2 hR1 _
          (by rw [k1_off92_eq]; show 128 * k.val + 16 * 0 + 1088 + 7 = 1024 * 1 + 64 * (2 * k.val + 1) + 7; omega) _
      have hw_v1955_3 : pair1_next.sl.v1955_3 d L k g2 = Spec.tcol (blkWord fl (wL L).val (2 * t1.val + 1) (64 * (2 * k.val + 1) + 8)) := by
        refine (rv_extract d L g2 (k1_off92 k ⟨0, by decide⟩) _ _ 8 (by decide) _ _).trans ?_
        exact rv_word d L fl (wL L).val (2 * t1.val + 1) 1 (2 * k.val + 1) 8 (by decide) (by omega) (by decide) g2 hR1 _
          (by rw [k1_off92_eq]; show 128 * k.val + 16 * 0 + 1088 + 8 = 1024 * 1 + 64 * (2 * k.val + 1) + 8; omega) _
      have hw_v1991_3 : pair1_next.sl.v1991_3 d L k g2 = Spec.tcol (blkWord fl (wL L).val (2 * t1.val + 1) (64 * (2 * k.val + 1) + 9)) := by
        refine (rv_extract d L g2 (k1_off92 k ⟨0, by decide⟩) _ _ 9 (by decide) _ _).trans ?_
        exact rv_word d L fl (wL L).val (2 * t1.val + 1) 1 (2 * k.val + 1) 9 (by decide) (by omega) (by decide) g2 hR1 _
          (by rw [k1_off92_eq]; show 128 * k.val + 16 * 0 + 1088 + 9 = 1024 * 1 + 64 * (2 * k.val + 1) + 9; omega) _
      have hw_v2027_3 : pair1_next.sl.v2027_3 d L k g2 = Spec.tcol (blkWord fl (wL L).val (2 * t1.val + 1) (64 * (2 * k.val + 1) + 10)) := by
        refine (rv_extract d L g2 (k1_off92 k ⟨0, by decide⟩) _ _ 10 (by decide) _ _).trans ?_
        exact rv_word d L fl (wL L).val (2 * t1.val + 1) 1 (2 * k.val + 1) 10 (by decide) (by omega) (by decide) g2 hR1 _
          (by rw [k1_off92_eq]; show 128 * k.val + 16 * 0 + 1088 + 10 = 1024 * 1 + 64 * (2 * k.val + 1) + 10; omega) _
      have hw_v2063_3 : pair1_next.sl.v2063_3 d L k g2 = Spec.tcol (blkWord fl (wL L).val (2 * t1.val + 1) (64 * (2 * k.val + 1) + 11)) := by
        refine (rv_extract d L g2 (k1_off92 k ⟨0, by decide⟩) _ _ 11 (by decide) _ _).trans ?_
        exact rv_word d L fl (wL L).val (2 * t1.val + 1) 1 (2 * k.val + 1) 11 (by decide) (by omega) (by decide) g2 hR1 _
          (by rw [k1_off92_eq]; show 128 * k.val + 16 * 0 + 1088 + 11 = 1024 * 1 + 64 * (2 * k.val + 1) + 11; omega) _
      have hw_v2099_3 : pair1_next.sl.v2099_3 d L k g2 = Spec.tcol (blkWord fl (wL L).val (2 * t1.val + 1) (64 * (2 * k.val + 1) + 12)) := by
        refine (rv_extract d L g2 (k1_off92 k ⟨0, by decide⟩) _ _ 12 (by decide) _ _).trans ?_
        exact rv_word d L fl (wL L).val (2 * t1.val + 1) 1 (2 * k.val + 1) 12 (by decide) (by omega) (by decide) g2 hR1 _
          (by rw [k1_off92_eq]; show 128 * k.val + 16 * 0 + 1088 + 12 = 1024 * 1 + 64 * (2 * k.val + 1) + 12; omega) _
      have hw_v2135_3 : pair1_next.sl.v2135_3 d L k g2 = Spec.tcol (blkWord fl (wL L).val (2 * t1.val + 1) (64 * (2 * k.val + 1) + 13)) := by
        refine (rv_extract d L g2 (k1_off92 k ⟨0, by decide⟩) _ _ 13 (by decide) _ _).trans ?_
        exact rv_word d L fl (wL L).val (2 * t1.val + 1) 1 (2 * k.val + 1) 13 (by decide) (by omega) (by decide) g2 hR1 _
          (by rw [k1_off92_eq]; show 128 * k.val + 16 * 0 + 1088 + 13 = 1024 * 1 + 64 * (2 * k.val + 1) + 13; omega) _
      have hw_v2171_3 : pair1_next.sl.v2171_3 d L k g2 = Spec.tcol (blkWord fl (wL L).val (2 * t1.val + 1) (64 * (2 * k.val + 1) + 14)) := by
        refine (rv_extract d L g2 (k1_off92 k ⟨0, by decide⟩) _ _ 14 (by decide) _ _).trans ?_
        exact rv_word d L fl (wL L).val (2 * t1.val + 1) 1 (2 * k.val + 1) 14 (by decide) (by omega) (by decide) g2 hR1 _
          (by rw [k1_off92_eq]; show 128 * k.val + 16 * 0 + 1088 + 14 = 1024 * 1 + 64 * (2 * k.val + 1) + 14; omega) _
      have hw_v2207_3 : pair1_next.sl.v2207_3 d L k g2 = Spec.tcol (blkWord fl (wL L).val (2 * t1.val + 1) (64 * (2 * k.val + 1) + 15)) := by
        refine (rv_extract d L g2 (k1_off92 k ⟨0, by decide⟩) _ _ 15 (by decide) _ _).trans ?_
        exact rv_word d L fl (wL L).val (2 * t1.val + 1) 1 (2 * k.val + 1) 15 (by decide) (by omega) (by decide) g2 hR1 _
          (by rw [k1_off92_eq]; show 128 * k.val + 16 * 0 + 1088 + 15 = 1024 * 1 + 64 * (2 * k.val + 1) + 15; omega) _
      have hw_v1667_4 : pair1_next.sl.v1667_4 d L k g2 = Spec.tcol (blkWord fl (wL L).val (2 * t1.val + 1) (64 * (2 * k.val + 1) + 16)) := by
        refine (rv_extract d L g2 (k1_off92 k ⟨1, by decide⟩) _ _ 0 (by decide) _ _).trans ?_
        exact rv_word d L fl (wL L).val (2 * t1.val + 1) 1 (2 * k.val + 1) 16 (by decide) (by omega) (by decide) g2 hR1 _
          (by rw [k1_off92_eq]; show 128 * k.val + 16 * 1 + 1088 + 0 = 1024 * 1 + 64 * (2 * k.val + 1) + 16; omega) _
      have hw_v1703_4 : pair1_next.sl.v1703_4 d L k g2 = Spec.tcol (blkWord fl (wL L).val (2 * t1.val + 1) (64 * (2 * k.val + 1) + 17)) := by
        refine (rv_extract d L g2 (k1_off92 k ⟨1, by decide⟩) _ _ 1 (by decide) _ _).trans ?_
        exact rv_word d L fl (wL L).val (2 * t1.val + 1) 1 (2 * k.val + 1) 17 (by decide) (by omega) (by decide) g2 hR1 _
          (by rw [k1_off92_eq]; show 128 * k.val + 16 * 1 + 1088 + 1 = 1024 * 1 + 64 * (2 * k.val + 1) + 17; omega) _
      have hw_v1739_4 : pair1_next.sl.v1739_4 d L k g2 = Spec.tcol (blkWord fl (wL L).val (2 * t1.val + 1) (64 * (2 * k.val + 1) + 18)) := by
        refine (rv_extract d L g2 (k1_off92 k ⟨1, by decide⟩) _ _ 2 (by decide) _ _).trans ?_
        exact rv_word d L fl (wL L).val (2 * t1.val + 1) 1 (2 * k.val + 1) 18 (by decide) (by omega) (by decide) g2 hR1 _
          (by rw [k1_off92_eq]; show 128 * k.val + 16 * 1 + 1088 + 2 = 1024 * 1 + 64 * (2 * k.val + 1) + 18; omega) _
      have hw_v1775_4 : pair1_next.sl.v1775_4 d L k g2 = Spec.tcol (blkWord fl (wL L).val (2 * t1.val + 1) (64 * (2 * k.val + 1) + 19)) := by
        refine (rv_extract d L g2 (k1_off92 k ⟨1, by decide⟩) _ _ 3 (by decide) _ _).trans ?_
        exact rv_word d L fl (wL L).val (2 * t1.val + 1) 1 (2 * k.val + 1) 19 (by decide) (by omega) (by decide) g2 hR1 _
          (by rw [k1_off92_eq]; show 128 * k.val + 16 * 1 + 1088 + 3 = 1024 * 1 + 64 * (2 * k.val + 1) + 19; omega) _
      have hw_v1811_4 : pair1_next.sl.v1811_4 d L k g2 = Spec.tcol (blkWord fl (wL L).val (2 * t1.val + 1) (64 * (2 * k.val + 1) + 20)) := by
        refine (rv_extract d L g2 (k1_off92 k ⟨1, by decide⟩) _ _ 4 (by decide) _ _).trans ?_
        exact rv_word d L fl (wL L).val (2 * t1.val + 1) 1 (2 * k.val + 1) 20 (by decide) (by omega) (by decide) g2 hR1 _
          (by rw [k1_off92_eq]; show 128 * k.val + 16 * 1 + 1088 + 4 = 1024 * 1 + 64 * (2 * k.val + 1) + 20; omega) _
      have hw_v1847_4 : pair1_next.sl.v1847_4 d L k g2 = Spec.tcol (blkWord fl (wL L).val (2 * t1.val + 1) (64 * (2 * k.val + 1) + 21)) := by
        refine (rv_extract d L g2 (k1_off92 k ⟨1, by decide⟩) _ _ 5 (by decide) _ _).trans ?_
        exact rv_word d L fl (wL L).val (2 * t1.val + 1) 1 (2 * k.val + 1) 21 (by decide) (by omega) (by decide) g2 hR1 _
          (by rw [k1_off92_eq]; show 128 * k.val + 16 * 1 + 1088 + 5 = 1024 * 1 + 64 * (2 * k.val + 1) + 21; omega) _
      have hw_v1883_4 : pair1_next.sl.v1883_4 d L k g2 = Spec.tcol (blkWord fl (wL L).val (2 * t1.val + 1) (64 * (2 * k.val + 1) + 22)) := by
        refine (rv_extract d L g2 (k1_off92 k ⟨1, by decide⟩) _ _ 6 (by decide) _ _).trans ?_
        exact rv_word d L fl (wL L).val (2 * t1.val + 1) 1 (2 * k.val + 1) 22 (by decide) (by omega) (by decide) g2 hR1 _
          (by rw [k1_off92_eq]; show 128 * k.val + 16 * 1 + 1088 + 6 = 1024 * 1 + 64 * (2 * k.val + 1) + 22; omega) _
      have hw_v1919_4 : pair1_next.sl.v1919_4 d L k g2 = Spec.tcol (blkWord fl (wL L).val (2 * t1.val + 1) (64 * (2 * k.val + 1) + 23)) := by
        refine (rv_extract d L g2 (k1_off92 k ⟨1, by decide⟩) _ _ 7 (by decide) _ _).trans ?_
        exact rv_word d L fl (wL L).val (2 * t1.val + 1) 1 (2 * k.val + 1) 23 (by decide) (by omega) (by decide) g2 hR1 _
          (by rw [k1_off92_eq]; show 128 * k.val + 16 * 1 + 1088 + 7 = 1024 * 1 + 64 * (2 * k.val + 1) + 23; omega) _
      have hw_v1955_4 : pair1_next.sl.v1955_4 d L k g2 = Spec.tcol (blkWord fl (wL L).val (2 * t1.val + 1) (64 * (2 * k.val + 1) + 24)) := by
        refine (rv_extract d L g2 (k1_off92 k ⟨1, by decide⟩) _ _ 8 (by decide) _ _).trans ?_
        exact rv_word d L fl (wL L).val (2 * t1.val + 1) 1 (2 * k.val + 1) 24 (by decide) (by omega) (by decide) g2 hR1 _
          (by rw [k1_off92_eq]; show 128 * k.val + 16 * 1 + 1088 + 8 = 1024 * 1 + 64 * (2 * k.val + 1) + 24; omega) _
      have hw_v1991_4 : pair1_next.sl.v1991_4 d L k g2 = Spec.tcol (blkWord fl (wL L).val (2 * t1.val + 1) (64 * (2 * k.val + 1) + 25)) := by
        refine (rv_extract d L g2 (k1_off92 k ⟨1, by decide⟩) _ _ 9 (by decide) _ _).trans ?_
        exact rv_word d L fl (wL L).val (2 * t1.val + 1) 1 (2 * k.val + 1) 25 (by decide) (by omega) (by decide) g2 hR1 _
          (by rw [k1_off92_eq]; show 128 * k.val + 16 * 1 + 1088 + 9 = 1024 * 1 + 64 * (2 * k.val + 1) + 25; omega) _
      have hw_v2027_4 : pair1_next.sl.v2027_4 d L k g2 = Spec.tcol (blkWord fl (wL L).val (2 * t1.val + 1) (64 * (2 * k.val + 1) + 26)) := by
        refine (rv_extract d L g2 (k1_off92 k ⟨1, by decide⟩) _ _ 10 (by decide) _ _).trans ?_
        exact rv_word d L fl (wL L).val (2 * t1.val + 1) 1 (2 * k.val + 1) 26 (by decide) (by omega) (by decide) g2 hR1 _
          (by rw [k1_off92_eq]; show 128 * k.val + 16 * 1 + 1088 + 10 = 1024 * 1 + 64 * (2 * k.val + 1) + 26; omega) _
      have hw_v2063_4 : pair1_next.sl.v2063_4 d L k g2 = Spec.tcol (blkWord fl (wL L).val (2 * t1.val + 1) (64 * (2 * k.val + 1) + 27)) := by
        refine (rv_extract d L g2 (k1_off92 k ⟨1, by decide⟩) _ _ 11 (by decide) _ _).trans ?_
        exact rv_word d L fl (wL L).val (2 * t1.val + 1) 1 (2 * k.val + 1) 27 (by decide) (by omega) (by decide) g2 hR1 _
          (by rw [k1_off92_eq]; show 128 * k.val + 16 * 1 + 1088 + 11 = 1024 * 1 + 64 * (2 * k.val + 1) + 27; omega) _
      have hw_v2099_4 : pair1_next.sl.v2099_4 d L k g2 = Spec.tcol (blkWord fl (wL L).val (2 * t1.val + 1) (64 * (2 * k.val + 1) + 28)) := by
        refine (rv_extract d L g2 (k1_off92 k ⟨1, by decide⟩) _ _ 12 (by decide) _ _).trans ?_
        exact rv_word d L fl (wL L).val (2 * t1.val + 1) 1 (2 * k.val + 1) 28 (by decide) (by omega) (by decide) g2 hR1 _
          (by rw [k1_off92_eq]; show 128 * k.val + 16 * 1 + 1088 + 12 = 1024 * 1 + 64 * (2 * k.val + 1) + 28; omega) _
      have hw_v2135_4 : pair1_next.sl.v2135_4 d L k g2 = Spec.tcol (blkWord fl (wL L).val (2 * t1.val + 1) (64 * (2 * k.val + 1) + 29)) := by
        refine (rv_extract d L g2 (k1_off92 k ⟨1, by decide⟩) _ _ 13 (by decide) _ _).trans ?_
        exact rv_word d L fl (wL L).val (2 * t1.val + 1) 1 (2 * k.val + 1) 29 (by decide) (by omega) (by decide) g2 hR1 _
          (by rw [k1_off92_eq]; show 128 * k.val + 16 * 1 + 1088 + 13 = 1024 * 1 + 64 * (2 * k.val + 1) + 29; omega) _
      have hw_v2171_4 : pair1_next.sl.v2171_4 d L k g2 = Spec.tcol (blkWord fl (wL L).val (2 * t1.val + 1) (64 * (2 * k.val + 1) + 30)) := by
        refine (rv_extract d L g2 (k1_off92 k ⟨1, by decide⟩) _ _ 14 (by decide) _ _).trans ?_
        exact rv_word d L fl (wL L).val (2 * t1.val + 1) 1 (2 * k.val + 1) 30 (by decide) (by omega) (by decide) g2 hR1 _
          (by rw [k1_off92_eq]; show 128 * k.val + 16 * 1 + 1088 + 14 = 1024 * 1 + 64 * (2 * k.val + 1) + 30; omega) _
      have hw_v2207_4 : pair1_next.sl.v2207_4 d L k g2 = Spec.tcol (blkWord fl (wL L).val (2 * t1.val + 1) (64 * (2 * k.val + 1) + 31)) := by
        refine (rv_extract d L g2 (k1_off92 k ⟨1, by decide⟩) _ _ 15 (by decide) _ _).trans ?_
        exact rv_word d L fl (wL L).val (2 * t1.val + 1) 1 (2 * k.val + 1) 31 (by decide) (by omega) (by decide) g2 hR1 _
          (by rw [k1_off92_eq]; show 128 * k.val + 16 * 1 + 1088 + 15 = 1024 * 1 + 64 * (2 * k.val + 1) + 31; omega) _
      have hw_v1667_5 : pair1_next.sl.v1667_5 d L k g2 = Spec.tcol (blkWord fl (wL L).val (2 * t1.val + 1) (64 * (2 * k.val + 1) + 32)) := by
        refine (rv_extract d L g2 (k1_off92 k ⟨2, by decide⟩) _ _ 0 (by decide) _ _).trans ?_
        exact rv_word d L fl (wL L).val (2 * t1.val + 1) 1 (2 * k.val + 1) 32 (by decide) (by omega) (by decide) g2 hR1 _
          (by rw [k1_off92_eq]; show 128 * k.val + 16 * 2 + 1088 + 0 = 1024 * 1 + 64 * (2 * k.val + 1) + 32; omega) _
      have hw_v1703_5 : pair1_next.sl.v1703_5 d L k g2 = Spec.tcol (blkWord fl (wL L).val (2 * t1.val + 1) (64 * (2 * k.val + 1) + 33)) := by
        refine (rv_extract d L g2 (k1_off92 k ⟨2, by decide⟩) _ _ 1 (by decide) _ _).trans ?_
        exact rv_word d L fl (wL L).val (2 * t1.val + 1) 1 (2 * k.val + 1) 33 (by decide) (by omega) (by decide) g2 hR1 _
          (by rw [k1_off92_eq]; show 128 * k.val + 16 * 2 + 1088 + 1 = 1024 * 1 + 64 * (2 * k.val + 1) + 33; omega) _
      have hw_v1739_5 : pair1_next.sl.v1739_5 d L k g2 = Spec.tcol (blkWord fl (wL L).val (2 * t1.val + 1) (64 * (2 * k.val + 1) + 34)) := by
        refine (rv_extract d L g2 (k1_off92 k ⟨2, by decide⟩) _ _ 2 (by decide) _ _).trans ?_
        exact rv_word d L fl (wL L).val (2 * t1.val + 1) 1 (2 * k.val + 1) 34 (by decide) (by omega) (by decide) g2 hR1 _
          (by rw [k1_off92_eq]; show 128 * k.val + 16 * 2 + 1088 + 2 = 1024 * 1 + 64 * (2 * k.val + 1) + 34; omega) _
      have hw_v1775_5 : pair1_next.sl.v1775_5 d L k g2 = Spec.tcol (blkWord fl (wL L).val (2 * t1.val + 1) (64 * (2 * k.val + 1) + 35)) := by
        refine (rv_extract d L g2 (k1_off92 k ⟨2, by decide⟩) _ _ 3 (by decide) _ _).trans ?_
        exact rv_word d L fl (wL L).val (2 * t1.val + 1) 1 (2 * k.val + 1) 35 (by decide) (by omega) (by decide) g2 hR1 _
          (by rw [k1_off92_eq]; show 128 * k.val + 16 * 2 + 1088 + 3 = 1024 * 1 + 64 * (2 * k.val + 1) + 35; omega) _
      have hw_v1811_5 : pair1_next.sl.v1811_5 d L k g2 = Spec.tcol (blkWord fl (wL L).val (2 * t1.val + 1) (64 * (2 * k.val + 1) + 36)) := by
        refine (rv_extract d L g2 (k1_off92 k ⟨2, by decide⟩) _ _ 4 (by decide) _ _).trans ?_
        exact rv_word d L fl (wL L).val (2 * t1.val + 1) 1 (2 * k.val + 1) 36 (by decide) (by omega) (by decide) g2 hR1 _
          (by rw [k1_off92_eq]; show 128 * k.val + 16 * 2 + 1088 + 4 = 1024 * 1 + 64 * (2 * k.val + 1) + 36; omega) _
      have hw_v1847_5 : pair1_next.sl.v1847_5 d L k g2 = Spec.tcol (blkWord fl (wL L).val (2 * t1.val + 1) (64 * (2 * k.val + 1) + 37)) := by
        refine (rv_extract d L g2 (k1_off92 k ⟨2, by decide⟩) _ _ 5 (by decide) _ _).trans ?_
        exact rv_word d L fl (wL L).val (2 * t1.val + 1) 1 (2 * k.val + 1) 37 (by decide) (by omega) (by decide) g2 hR1 _
          (by rw [k1_off92_eq]; show 128 * k.val + 16 * 2 + 1088 + 5 = 1024 * 1 + 64 * (2 * k.val + 1) + 37; omega) _
      have hw_v1883_5 : pair1_next.sl.v1883_5 d L k g2 = Spec.tcol (blkWord fl (wL L).val (2 * t1.val + 1) (64 * (2 * k.val + 1) + 38)) := by
        refine (rv_extract d L g2 (k1_off92 k ⟨2, by decide⟩) _ _ 6 (by decide) _ _).trans ?_
        exact rv_word d L fl (wL L).val (2 * t1.val + 1) 1 (2 * k.val + 1) 38 (by decide) (by omega) (by decide) g2 hR1 _
          (by rw [k1_off92_eq]; show 128 * k.val + 16 * 2 + 1088 + 6 = 1024 * 1 + 64 * (2 * k.val + 1) + 38; omega) _
      have hw_v1919_5 : pair1_next.sl.v1919_5 d L k g2 = Spec.tcol (blkWord fl (wL L).val (2 * t1.val + 1) (64 * (2 * k.val + 1) + 39)) := by
        refine (rv_extract d L g2 (k1_off92 k ⟨2, by decide⟩) _ _ 7 (by decide) _ _).trans ?_
        exact rv_word d L fl (wL L).val (2 * t1.val + 1) 1 (2 * k.val + 1) 39 (by decide) (by omega) (by decide) g2 hR1 _
          (by rw [k1_off92_eq]; show 128 * k.val + 16 * 2 + 1088 + 7 = 1024 * 1 + 64 * (2 * k.val + 1) + 39; omega) _
      have hw_v1955_5 : pair1_next.sl.v1955_5 d L k g2 = Spec.tcol (blkWord fl (wL L).val (2 * t1.val + 1) (64 * (2 * k.val + 1) + 40)) := by
        refine (rv_extract d L g2 (k1_off92 k ⟨2, by decide⟩) _ _ 8 (by decide) _ _).trans ?_
        exact rv_word d L fl (wL L).val (2 * t1.val + 1) 1 (2 * k.val + 1) 40 (by decide) (by omega) (by decide) g2 hR1 _
          (by rw [k1_off92_eq]; show 128 * k.val + 16 * 2 + 1088 + 8 = 1024 * 1 + 64 * (2 * k.val + 1) + 40; omega) _
      have hw_v1991_5 : pair1_next.sl.v1991_5 d L k g2 = Spec.tcol (blkWord fl (wL L).val (2 * t1.val + 1) (64 * (2 * k.val + 1) + 41)) := by
        refine (rv_extract d L g2 (k1_off92 k ⟨2, by decide⟩) _ _ 9 (by decide) _ _).trans ?_
        exact rv_word d L fl (wL L).val (2 * t1.val + 1) 1 (2 * k.val + 1) 41 (by decide) (by omega) (by decide) g2 hR1 _
          (by rw [k1_off92_eq]; show 128 * k.val + 16 * 2 + 1088 + 9 = 1024 * 1 + 64 * (2 * k.val + 1) + 41; omega) _
      have hw_v2027_5 : pair1_next.sl.v2027_5 d L k g2 = Spec.tcol (blkWord fl (wL L).val (2 * t1.val + 1) (64 * (2 * k.val + 1) + 42)) := by
        refine (rv_extract d L g2 (k1_off92 k ⟨2, by decide⟩) _ _ 10 (by decide) _ _).trans ?_
        exact rv_word d L fl (wL L).val (2 * t1.val + 1) 1 (2 * k.val + 1) 42 (by decide) (by omega) (by decide) g2 hR1 _
          (by rw [k1_off92_eq]; show 128 * k.val + 16 * 2 + 1088 + 10 = 1024 * 1 + 64 * (2 * k.val + 1) + 42; omega) _
      have hw_v2063_5 : pair1_next.sl.v2063_5 d L k g2 = Spec.tcol (blkWord fl (wL L).val (2 * t1.val + 1) (64 * (2 * k.val + 1) + 43)) := by
        refine (rv_extract d L g2 (k1_off92 k ⟨2, by decide⟩) _ _ 11 (by decide) _ _).trans ?_
        exact rv_word d L fl (wL L).val (2 * t1.val + 1) 1 (2 * k.val + 1) 43 (by decide) (by omega) (by decide) g2 hR1 _
          (by rw [k1_off92_eq]; show 128 * k.val + 16 * 2 + 1088 + 11 = 1024 * 1 + 64 * (2 * k.val + 1) + 43; omega) _
      have hw_v2099_5 : pair1_next.sl.v2099_5 d L k g2 = Spec.tcol (blkWord fl (wL L).val (2 * t1.val + 1) (64 * (2 * k.val + 1) + 44)) := by
        refine (rv_extract d L g2 (k1_off92 k ⟨2, by decide⟩) _ _ 12 (by decide) _ _).trans ?_
        exact rv_word d L fl (wL L).val (2 * t1.val + 1) 1 (2 * k.val + 1) 44 (by decide) (by omega) (by decide) g2 hR1 _
          (by rw [k1_off92_eq]; show 128 * k.val + 16 * 2 + 1088 + 12 = 1024 * 1 + 64 * (2 * k.val + 1) + 44; omega) _
      have hw_v2135_5 : pair1_next.sl.v2135_5 d L k g2 = Spec.tcol (blkWord fl (wL L).val (2 * t1.val + 1) (64 * (2 * k.val + 1) + 45)) := by
        refine (rv_extract d L g2 (k1_off92 k ⟨2, by decide⟩) _ _ 13 (by decide) _ _).trans ?_
        exact rv_word d L fl (wL L).val (2 * t1.val + 1) 1 (2 * k.val + 1) 45 (by decide) (by omega) (by decide) g2 hR1 _
          (by rw [k1_off92_eq]; show 128 * k.val + 16 * 2 + 1088 + 13 = 1024 * 1 + 64 * (2 * k.val + 1) + 45; omega) _
      have hw_v2171_5 : pair1_next.sl.v2171_5 d L k g2 = Spec.tcol (blkWord fl (wL L).val (2 * t1.val + 1) (64 * (2 * k.val + 1) + 46)) := by
        refine (rv_extract d L g2 (k1_off92 k ⟨2, by decide⟩) _ _ 14 (by decide) _ _).trans ?_
        exact rv_word d L fl (wL L).val (2 * t1.val + 1) 1 (2 * k.val + 1) 46 (by decide) (by omega) (by decide) g2 hR1 _
          (by rw [k1_off92_eq]; show 128 * k.val + 16 * 2 + 1088 + 14 = 1024 * 1 + 64 * (2 * k.val + 1) + 46; omega) _
      have hw_v2207_5 : pair1_next.sl.v2207_5 d L k g2 = Spec.tcol (blkWord fl (wL L).val (2 * t1.val + 1) (64 * (2 * k.val + 1) + 47)) := by
        refine (rv_extract d L g2 (k1_off92 k ⟨2, by decide⟩) _ _ 15 (by decide) _ _).trans ?_
        exact rv_word d L fl (wL L).val (2 * t1.val + 1) 1 (2 * k.val + 1) 47 (by decide) (by omega) (by decide) g2 hR1 _
          (by rw [k1_off92_eq]; show 128 * k.val + 16 * 2 + 1088 + 15 = 1024 * 1 + 64 * (2 * k.val + 1) + 47; omega) _
      have hw_v1572 : pair1_next.sl.v1572 d L k g2 = Spec.tcol (blkWord fl (wL L).val (2 * t1.val + 1) (64 * (2 * k.val + 1) + 48)) := by
        refine (rv_extract d L g2 (k1_off109 k) _ _ 0 (by decide) _ _).trans ?_
        exact rv_word d L fl (wL L).val (2 * t1.val + 1) 1 (2 * k.val + 1) 48 (by decide) (by omega) (by decide) g2 hR1 _
          (by rw [k1_off109_eq]; show 128 * k.val + 1136 + 0 = 1024 * 1 + 64 * (2 * k.val + 1) + 48; omega) _
      have hw_v1606 : pair1_next.sl.v1606 d L k g2 = Spec.tcol (blkWord fl (wL L).val (2 * t1.val + 1) (64 * (2 * k.val + 1) + 49)) := by
        refine (rv_extract d L g2 (k1_off109 k) _ _ 1 (by decide) _ _).trans ?_
        exact rv_word d L fl (wL L).val (2 * t1.val + 1) 1 (2 * k.val + 1) 49 (by decide) (by omega) (by decide) g2 hR1 _
          (by rw [k1_off109_eq]; show 128 * k.val + 1136 + 1 = 1024 * 1 + 64 * (2 * k.val + 1) + 49; omega) _
      have a_v1445_A0 : pair1_next.sl.v1445 = AccMath.accVec (rowF fl tab (wL L).val (2 * t1.val + 1) (2 * k.val)) (offF fl (wL L).val (2 * t1.val + 1) (2 * k.val)) 0 0 := acc_zero fl tab (wL L).val (2 * t1.val + 1) (2 * k.val) 0
      have a_v1675 : pair1_next.sl.v1675 d L tab k r g1 g2 hR hin = AccMath.accVec (rowF fl tab (wL L).val (2 * t1.val + 1) (2 * k.val)) (offF fl (wL L).val (2 * t1.val + 1) (2 * k.val)) 0 1 := by
        rw [show pair1_next.sl.v1675 d L tab k r g1 g2 hR hin = addf (pair1_next.sl.v1445) (pair1_next.sl.v1674 d L tab k r g1 g2 hR hin) from rfl, a_v1445_A0]
        exact acc_step d L fl tab (wL L).val (2 * t1.val + 1) (2 * k.val) 0 _ hRA ⟨0, by decide⟩ ⟨0, by decide⟩ _ rfl _ hw_v1667 _ (k1_off66_form ..) _ _
      have a_v1711 : pair1_next.sl.v1711 d L tab k r g1 g2 hR hin = AccMath.accVec (rowF fl tab (wL L).val (2 * t1.val + 1) (2 * k.val)) (offF fl (wL L).val (2 * t1.val + 1) (2 * k.val)) 0 2 := by
        rw [show pair1_next.sl.v1711 d L tab k r g1 g2 hR hin = addf (pair1_next.sl.v1675 d L tab k r g1 g2 hR hin) (pair1_next.sl.v1710 d L tab k r g1 g2 hR hin) from rfl, a_v1675]
        exact acc_step d L fl tab (wL L).val (2 * t1.val + 1) (2 * k.val) 0 _ hRA ⟨1, by decide⟩ ⟨0, by decide⟩ _ rfl _ hw_v1703 _ (k1_off67_form ..) _ _
      have a_v1747 : pair1_next.sl.v1747 d L tab k r g1 g2 hR hin = AccMath.accVec (rowF fl tab (wL L).val (2 * t1.val + 1) (2 * k.val)) (offF fl (wL L).val (2 * t1.val + 1) (2 * k.val)) 0 3 := by
        rw [show pair1_next.sl.v1747 d L tab k r g1 g2 hR hin = addf (pair1_next.sl.v1711 d L tab k r g1 g2 hR hin) (pair1_next.sl.v1746 d L tab k r g1 g2 hR hin) from rfl, a_v1711]
        exact acc_step d L fl tab (wL L).val (2 * t1.val + 1) (2 * k.val) 0 _ hRA ⟨2, by decide⟩ ⟨0, by decide⟩ _ rfl _ hw_v1739 _ (k1_off68_form ..) _ _
      have a_v1783 : pair1_next.sl.v1783 d L tab k r g1 g2 hR hin = AccMath.accVec (rowF fl tab (wL L).val (2 * t1.val + 1) (2 * k.val)) (offF fl (wL L).val (2 * t1.val + 1) (2 * k.val)) 0 4 := by
        rw [show pair1_next.sl.v1783 d L tab k r g1 g2 hR hin = addf (pair1_next.sl.v1747 d L tab k r g1 g2 hR hin) (pair1_next.sl.v1782 d L tab k r g1 g2 hR hin) from rfl, a_v1747]
        exact acc_step d L fl tab (wL L).val (2 * t1.val + 1) (2 * k.val) 0 _ hRA ⟨3, by decide⟩ ⟨0, by decide⟩ _ rfl _ hw_v1775 _ (k1_off69_form ..) _ _
      have a_v1819 : pair1_next.sl.v1819 d L tab k r g1 g2 hR hin = AccMath.accVec (rowF fl tab (wL L).val (2 * t1.val + 1) (2 * k.val)) (offF fl (wL L).val (2 * t1.val + 1) (2 * k.val)) 0 5 := by
        rw [show pair1_next.sl.v1819 d L tab k r g1 g2 hR hin = addf (pair1_next.sl.v1783 d L tab k r g1 g2 hR hin) (pair1_next.sl.v1818 d L tab k r g1 g2 hR hin) from rfl, a_v1783]
        exact acc_step d L fl tab (wL L).val (2 * t1.val + 1) (2 * k.val) 0 _ hRA ⟨4, by decide⟩ ⟨0, by decide⟩ _ rfl _ hw_v1811 _ (k1_off70_form ..) _ _
      have a_v1855 : pair1_next.sl.v1855 d L tab k r g1 g2 hR hin = AccMath.accVec (rowF fl tab (wL L).val (2 * t1.val + 1) (2 * k.val)) (offF fl (wL L).val (2 * t1.val + 1) (2 * k.val)) 0 6 := by
        rw [show pair1_next.sl.v1855 d L tab k r g1 g2 hR hin = addf (pair1_next.sl.v1819 d L tab k r g1 g2 hR hin) (pair1_next.sl.v1854 d L tab k r g1 g2 hR hin) from rfl, a_v1819]
        exact acc_step d L fl tab (wL L).val (2 * t1.val + 1) (2 * k.val) 0 _ hRA ⟨5, by decide⟩ ⟨0, by decide⟩ _ rfl _ hw_v1847 _ (k1_off71_form ..) _ _
      have a_v1891 : pair1_next.sl.v1891 d L tab k r g1 g2 hR hin = AccMath.accVec (rowF fl tab (wL L).val (2 * t1.val + 1) (2 * k.val)) (offF fl (wL L).val (2 * t1.val + 1) (2 * k.val)) 0 7 := by
        rw [show pair1_next.sl.v1891 d L tab k r g1 g2 hR hin = addf (pair1_next.sl.v1855 d L tab k r g1 g2 hR hin) (pair1_next.sl.v1890 d L tab k r g1 g2 hR hin) from rfl, a_v1855]
        exact acc_step d L fl tab (wL L).val (2 * t1.val + 1) (2 * k.val) 0 _ hRA ⟨6, by decide⟩ ⟨0, by decide⟩ _ rfl _ hw_v1883 _ (k1_off72_form ..) _ _
      have a_v1927 : pair1_next.sl.v1927 d L tab k r g1 g2 hR hin = AccMath.accVec (rowF fl tab (wL L).val (2 * t1.val + 1) (2 * k.val)) (offF fl (wL L).val (2 * t1.val + 1) (2 * k.val)) 0 8 := by
        rw [show pair1_next.sl.v1927 d L tab k r g1 g2 hR hin = addf (pair1_next.sl.v1891 d L tab k r g1 g2 hR hin) (pair1_next.sl.v1926 d L tab k r g1 g2 hR hin) from rfl, a_v1891]
        exact acc_step d L fl tab (wL L).val (2 * t1.val + 1) (2 * k.val) 0 _ hRA ⟨7, by decide⟩ ⟨0, by decide⟩ _ rfl _ hw_v1919 _ (k1_off73_form ..) _ _
      have a_v1963 : pair1_next.sl.v1963 d L tab k r g1 g2 hR hin = AccMath.accVec (rowF fl tab (wL L).val (2 * t1.val + 1) (2 * k.val)) (offF fl (wL L).val (2 * t1.val + 1) (2 * k.val)) 0 9 := by
        rw [show pair1_next.sl.v1963 d L tab k r g1 g2 hR hin = addf (pair1_next.sl.v1927 d L tab k r g1 g2 hR hin) (pair1_next.sl.v1962 d L tab k r g1 g2 hR hin) from rfl, a_v1927]
        exact acc_step d L fl tab (wL L).val (2 * t1.val + 1) (2 * k.val) 0 _ hRA ⟨8, by decide⟩ ⟨0, by decide⟩ _ rfl _ hw_v1955 _ (k1_off74_form ..) _ _
      have a_v1999 : pair1_next.sl.v1999 d L tab k r g1 g2 hR hin = AccMath.accVec (rowF fl tab (wL L).val (2 * t1.val + 1) (2 * k.val)) (offF fl (wL L).val (2 * t1.val + 1) (2 * k.val)) 0 10 := by
        rw [show pair1_next.sl.v1999 d L tab k r g1 g2 hR hin = addf (pair1_next.sl.v1963 d L tab k r g1 g2 hR hin) (pair1_next.sl.v1998 d L tab k r g1 g2 hR hin) from rfl, a_v1963]
        exact acc_step d L fl tab (wL L).val (2 * t1.val + 1) (2 * k.val) 0 _ hRA ⟨9, by decide⟩ ⟨0, by decide⟩ _ rfl _ hw_v1991 _ (k1_off75_form ..) _ _
      have a_v2035 : pair1_next.sl.v2035 d L tab k r g1 g2 hR hin = AccMath.accVec (rowF fl tab (wL L).val (2 * t1.val + 1) (2 * k.val)) (offF fl (wL L).val (2 * t1.val + 1) (2 * k.val)) 0 11 := by
        rw [show pair1_next.sl.v2035 d L tab k r g1 g2 hR hin = addf (pair1_next.sl.v1999 d L tab k r g1 g2 hR hin) (pair1_next.sl.v2034 d L tab k r g1 g2 hR hin) from rfl, a_v1999]
        exact acc_step d L fl tab (wL L).val (2 * t1.val + 1) (2 * k.val) 0 _ hRA ⟨10, by decide⟩ ⟨0, by decide⟩ _ rfl _ hw_v2027 _ (k1_off76_form ..) _ _
      have a_v2071 : pair1_next.sl.v2071 d L tab k r g1 g2 hR hin = AccMath.accVec (rowF fl tab (wL L).val (2 * t1.val + 1) (2 * k.val)) (offF fl (wL L).val (2 * t1.val + 1) (2 * k.val)) 0 12 := by
        rw [show pair1_next.sl.v2071 d L tab k r g1 g2 hR hin = addf (pair1_next.sl.v2035 d L tab k r g1 g2 hR hin) (pair1_next.sl.v2070 d L tab k r g1 g2 hR hin) from rfl, a_v2035]
        exact acc_step d L fl tab (wL L).val (2 * t1.val + 1) (2 * k.val) 0 _ hRA ⟨11, by decide⟩ ⟨0, by decide⟩ _ rfl _ hw_v2063 _ (k1_off77_form ..) _ _
      have a_v2107 : pair1_next.sl.v2107 d L tab k r g1 g2 hR hin = AccMath.accVec (rowF fl tab (wL L).val (2 * t1.val + 1) (2 * k.val)) (offF fl (wL L).val (2 * t1.val + 1) (2 * k.val)) 0 13 := by
        rw [show pair1_next.sl.v2107 d L tab k r g1 g2 hR hin = addf (pair1_next.sl.v2071 d L tab k r g1 g2 hR hin) (pair1_next.sl.v2106 d L tab k r g1 g2 hR hin) from rfl, a_v2071]
        exact acc_step d L fl tab (wL L).val (2 * t1.val + 1) (2 * k.val) 0 _ hRA ⟨12, by decide⟩ ⟨0, by decide⟩ _ rfl _ hw_v2099 _ (k1_off78_form ..) _ _
      have a_v2143 : pair1_next.sl.v2143 d L tab k r g1 g2 hR hin = AccMath.accVec (rowF fl tab (wL L).val (2 * t1.val + 1) (2 * k.val)) (offF fl (wL L).val (2 * t1.val + 1) (2 * k.val)) 0 14 := by
        rw [show pair1_next.sl.v2143 d L tab k r g1 g2 hR hin = addf (pair1_next.sl.v2107 d L tab k r g1 g2 hR hin) (pair1_next.sl.v2142 d L tab k r g1 g2 hR hin) from rfl, a_v2107]
        exact acc_step d L fl tab (wL L).val (2 * t1.val + 1) (2 * k.val) 0 _ hRA ⟨13, by decide⟩ ⟨0, by decide⟩ _ rfl _ hw_v2135 _ (k1_off79_form ..) _ _
      have a_v2179 : pair1_next.sl.v2179 d L tab k r g1 g2 hR hin = AccMath.accVec (rowF fl tab (wL L).val (2 * t1.val + 1) (2 * k.val)) (offF fl (wL L).val (2 * t1.val + 1) (2 * k.val)) 0 15 := by
        rw [show pair1_next.sl.v2179 d L tab k r g1 g2 hR hin = addf (pair1_next.sl.v2143 d L tab k r g1 g2 hR hin) (pair1_next.sl.v2178 d L tab k r g1 g2 hR hin) from rfl, a_v2143]
        exact acc_step d L fl tab (wL L).val (2 * t1.val + 1) (2 * k.val) 0 _ hRA ⟨14, by decide⟩ ⟨0, by decide⟩ _ rfl _ hw_v2171 _ (k1_off80_form ..) _ _
      have a_v2215 : pair1_next.sl.v2215 d L tab k r g1 g2 hR hin = AccMath.accVec (rowF fl tab (wL L).val (2 * t1.val + 1) (2 * k.val)) (offF fl (wL L).val (2 * t1.val + 1) (2 * k.val)) 0 16 := by
        rw [show pair1_next.sl.v2215 d L tab k r g1 g2 hR hin = addf (pair1_next.sl.v2179 d L tab k r g1 g2 hR hin) (pair1_next.sl.v2214 d L tab k r g1 g2 hR hin) from rfl, a_v2179]
        exact acc_step d L fl tab (wL L).val (2 * t1.val + 1) (2 * k.val) 0 _ hRA ⟨15, by decide⟩ ⟨0, by decide⟩ _ rfl _ hw_v2207 _ (k1_off81_form ..) _ _
      have a_v1675_1 : pair1_next.sl.v1675_1 d L tab k r g1 g2 hR hin = AccMath.accVec (rowF fl tab (wL L).val (2 * t1.val + 1) (2 * k.val)) (offF fl (wL L).val (2 * t1.val + 1) (2 * k.val)) 0 17 := by
        rw [show pair1_next.sl.v1675_1 d L tab k r g1 g2 hR hin = addf (pair1_next.sl.v2215 d L tab k r g1 g2 hR hin) (pair1_next.sl.v1674_1 d L tab k r g1 g2 hR hin) from rfl, a_v2215]
        exact acc_step d L fl tab (wL L).val (2 * t1.val + 1) (2 * k.val) 0 _ hRA ⟨16, by decide⟩ ⟨0, by decide⟩ _ rfl _ hw_v1667_1 _ (k1_off66_form ..) _ _
      have a_v1711_1 : pair1_next.sl.v1711_1 d L tab k r g1 g2 hR hin = AccMath.accVec (rowF fl tab (wL L).val (2 * t1.val + 1) (2 * k.val)) (offF fl (wL L).val (2 * t1.val + 1) (2 * k.val)) 0 18 := by
        rw [show pair1_next.sl.v1711_1 d L tab k r g1 g2 hR hin = addf (pair1_next.sl.v1675_1 d L tab k r g1 g2 hR hin) (pair1_next.sl.v1710_1 d L tab k r g1 g2 hR hin) from rfl, a_v1675_1]
        exact acc_step d L fl tab (wL L).val (2 * t1.val + 1) (2 * k.val) 0 _ hRA ⟨17, by decide⟩ ⟨0, by decide⟩ _ rfl _ hw_v1703_1 _ (k1_off67_form ..) _ _
      have a_v1747_1 : pair1_next.sl.v1747_1 d L tab k r g1 g2 hR hin = AccMath.accVec (rowF fl tab (wL L).val (2 * t1.val + 1) (2 * k.val)) (offF fl (wL L).val (2 * t1.val + 1) (2 * k.val)) 0 19 := by
        rw [show pair1_next.sl.v1747_1 d L tab k r g1 g2 hR hin = addf (pair1_next.sl.v1711_1 d L tab k r g1 g2 hR hin) (pair1_next.sl.v1746_1 d L tab k r g1 g2 hR hin) from rfl, a_v1711_1]
        exact acc_step d L fl tab (wL L).val (2 * t1.val + 1) (2 * k.val) 0 _ hRA ⟨18, by decide⟩ ⟨0, by decide⟩ _ rfl _ hw_v1739_1 _ (k1_off68_form ..) _ _
      have a_v1783_1 : pair1_next.sl.v1783_1 d L tab k r g1 g2 hR hin = AccMath.accVec (rowF fl tab (wL L).val (2 * t1.val + 1) (2 * k.val)) (offF fl (wL L).val (2 * t1.val + 1) (2 * k.val)) 0 20 := by
        rw [show pair1_next.sl.v1783_1 d L tab k r g1 g2 hR hin = addf (pair1_next.sl.v1747_1 d L tab k r g1 g2 hR hin) (pair1_next.sl.v1782_1 d L tab k r g1 g2 hR hin) from rfl, a_v1747_1]
        exact acc_step d L fl tab (wL L).val (2 * t1.val + 1) (2 * k.val) 0 _ hRA ⟨19, by decide⟩ ⟨0, by decide⟩ _ rfl _ hw_v1775_1 _ (k1_off69_form ..) _ _
      have a_v1819_1 : pair1_next.sl.v1819_1 d L tab k r g1 g2 hR hin = AccMath.accVec (rowF fl tab (wL L).val (2 * t1.val + 1) (2 * k.val)) (offF fl (wL L).val (2 * t1.val + 1) (2 * k.val)) 0 21 := by
        rw [show pair1_next.sl.v1819_1 d L tab k r g1 g2 hR hin = addf (pair1_next.sl.v1783_1 d L tab k r g1 g2 hR hin) (pair1_next.sl.v1818_1 d L tab k r g1 g2 hR hin) from rfl, a_v1783_1]
        exact acc_step d L fl tab (wL L).val (2 * t1.val + 1) (2 * k.val) 0 _ hRA ⟨20, by decide⟩ ⟨0, by decide⟩ _ rfl _ hw_v1811_1 _ (k1_off70_form ..) _ _
      have a_v1855_1 : pair1_next.sl.v1855_1 d L tab k r g1 g2 hR hin = AccMath.accVec (rowF fl tab (wL L).val (2 * t1.val + 1) (2 * k.val)) (offF fl (wL L).val (2 * t1.val + 1) (2 * k.val)) 0 22 := by
        rw [show pair1_next.sl.v1855_1 d L tab k r g1 g2 hR hin = addf (pair1_next.sl.v1819_1 d L tab k r g1 g2 hR hin) (pair1_next.sl.v1854_1 d L tab k r g1 g2 hR hin) from rfl, a_v1819_1]
        exact acc_step d L fl tab (wL L).val (2 * t1.val + 1) (2 * k.val) 0 _ hRA ⟨21, by decide⟩ ⟨0, by decide⟩ _ rfl _ hw_v1847_1 _ (k1_off71_form ..) _ _
      have a_v1891_1 : pair1_next.sl.v1891_1 d L tab k r g1 g2 hR hin = AccMath.accVec (rowF fl tab (wL L).val (2 * t1.val + 1) (2 * k.val)) (offF fl (wL L).val (2 * t1.val + 1) (2 * k.val)) 0 23 := by
        rw [show pair1_next.sl.v1891_1 d L tab k r g1 g2 hR hin = addf (pair1_next.sl.v1855_1 d L tab k r g1 g2 hR hin) (pair1_next.sl.v1890_1 d L tab k r g1 g2 hR hin) from rfl, a_v1855_1]
        exact acc_step d L fl tab (wL L).val (2 * t1.val + 1) (2 * k.val) 0 _ hRA ⟨22, by decide⟩ ⟨0, by decide⟩ _ rfl _ hw_v1883_1 _ (k1_off72_form ..) _ _
      have a_v1927_1 : pair1_next.sl.v1927_1 d L tab k r g1 g2 hR hin = AccMath.accVec (rowF fl tab (wL L).val (2 * t1.val + 1) (2 * k.val)) (offF fl (wL L).val (2 * t1.val + 1) (2 * k.val)) 0 24 := by
        rw [show pair1_next.sl.v1927_1 d L tab k r g1 g2 hR hin = addf (pair1_next.sl.v1891_1 d L tab k r g1 g2 hR hin) (pair1_next.sl.v1926_1 d L tab k r g1 g2 hR hin) from rfl, a_v1891_1]
        exact acc_step d L fl tab (wL L).val (2 * t1.val + 1) (2 * k.val) 0 _ hRA ⟨23, by decide⟩ ⟨0, by decide⟩ _ rfl _ hw_v1919_1 _ (k1_off73_form ..) _ _
      have a_v1963_1 : pair1_next.sl.v1963_1 d L tab k r g1 g2 hR hin = AccMath.accVec (rowF fl tab (wL L).val (2 * t1.val + 1) (2 * k.val)) (offF fl (wL L).val (2 * t1.val + 1) (2 * k.val)) 0 25 := by
        rw [show pair1_next.sl.v1963_1 d L tab k r g1 g2 hR hin = addf (pair1_next.sl.v1927_1 d L tab k r g1 g2 hR hin) (pair1_next.sl.v1962_1 d L tab k r g1 g2 hR hin) from rfl, a_v1927_1]
        exact acc_step d L fl tab (wL L).val (2 * t1.val + 1) (2 * k.val) 0 _ hRA ⟨24, by decide⟩ ⟨0, by decide⟩ _ rfl _ hw_v1955_1 _ (k1_off74_form ..) _ _
      have a_v1999_1 : pair1_next.sl.v1999_1 d L tab k r g1 g2 hR hin = AccMath.accVec (rowF fl tab (wL L).val (2 * t1.val + 1) (2 * k.val)) (offF fl (wL L).val (2 * t1.val + 1) (2 * k.val)) 0 26 := by
        rw [show pair1_next.sl.v1999_1 d L tab k r g1 g2 hR hin = addf (pair1_next.sl.v1963_1 d L tab k r g1 g2 hR hin) (pair1_next.sl.v1998_1 d L tab k r g1 g2 hR hin) from rfl, a_v1963_1]
        exact acc_step d L fl tab (wL L).val (2 * t1.val + 1) (2 * k.val) 0 _ hRA ⟨25, by decide⟩ ⟨0, by decide⟩ _ rfl _ hw_v1991_1 _ (k1_off75_form ..) _ _
      have a_v2035_1 : pair1_next.sl.v2035_1 d L tab k r g1 g2 hR hin = AccMath.accVec (rowF fl tab (wL L).val (2 * t1.val + 1) (2 * k.val)) (offF fl (wL L).val (2 * t1.val + 1) (2 * k.val)) 0 27 := by
        rw [show pair1_next.sl.v2035_1 d L tab k r g1 g2 hR hin = addf (pair1_next.sl.v1999_1 d L tab k r g1 g2 hR hin) (pair1_next.sl.v2034_1 d L tab k r g1 g2 hR hin) from rfl, a_v1999_1]
        exact acc_step d L fl tab (wL L).val (2 * t1.val + 1) (2 * k.val) 0 _ hRA ⟨26, by decide⟩ ⟨0, by decide⟩ _ rfl _ hw_v2027_1 _ (k1_off76_form ..) _ _
      have a_v2071_1 : pair1_next.sl.v2071_1 d L tab k r g1 g2 hR hin = AccMath.accVec (rowF fl tab (wL L).val (2 * t1.val + 1) (2 * k.val)) (offF fl (wL L).val (2 * t1.val + 1) (2 * k.val)) 0 28 := by
        rw [show pair1_next.sl.v2071_1 d L tab k r g1 g2 hR hin = addf (pair1_next.sl.v2035_1 d L tab k r g1 g2 hR hin) (pair1_next.sl.v2070_1 d L tab k r g1 g2 hR hin) from rfl, a_v2035_1]
        exact acc_step d L fl tab (wL L).val (2 * t1.val + 1) (2 * k.val) 0 _ hRA ⟨27, by decide⟩ ⟨0, by decide⟩ _ rfl _ hw_v2063_1 _ (k1_off77_form ..) _ _
      have a_v2107_1 : pair1_next.sl.v2107_1 d L tab k r g1 g2 hR hin = AccMath.accVec (rowF fl tab (wL L).val (2 * t1.val + 1) (2 * k.val)) (offF fl (wL L).val (2 * t1.val + 1) (2 * k.val)) 0 29 := by
        rw [show pair1_next.sl.v2107_1 d L tab k r g1 g2 hR hin = addf (pair1_next.sl.v2071_1 d L tab k r g1 g2 hR hin) (pair1_next.sl.v2106_1 d L tab k r g1 g2 hR hin) from rfl, a_v2071_1]
        exact acc_step d L fl tab (wL L).val (2 * t1.val + 1) (2 * k.val) 0 _ hRA ⟨28, by decide⟩ ⟨0, by decide⟩ _ rfl _ hw_v2099_1 _ (k1_off78_form ..) _ _
      have a_v2143_1 : pair1_next.sl.v2143_1 d L tab k r g1 g2 hR hin = AccMath.accVec (rowF fl tab (wL L).val (2 * t1.val + 1) (2 * k.val)) (offF fl (wL L).val (2 * t1.val + 1) (2 * k.val)) 0 30 := by
        rw [show pair1_next.sl.v2143_1 d L tab k r g1 g2 hR hin = addf (pair1_next.sl.v2107_1 d L tab k r g1 g2 hR hin) (pair1_next.sl.v2142_1 d L tab k r g1 g2 hR hin) from rfl, a_v2107_1]
        exact acc_step d L fl tab (wL L).val (2 * t1.val + 1) (2 * k.val) 0 _ hRA ⟨29, by decide⟩ ⟨0, by decide⟩ _ rfl _ hw_v2135_1 _ (k1_off79_form ..) _ _
      have a_v2179_1 : pair1_next.sl.v2179_1 d L tab k r g1 g2 hR hin = AccMath.accVec (rowF fl tab (wL L).val (2 * t1.val + 1) (2 * k.val)) (offF fl (wL L).val (2 * t1.val + 1) (2 * k.val)) 0 31 := by
        rw [show pair1_next.sl.v2179_1 d L tab k r g1 g2 hR hin = addf (pair1_next.sl.v2143_1 d L tab k r g1 g2 hR hin) (pair1_next.sl.v2178_1 d L tab k r g1 g2 hR hin) from rfl, a_v2143_1]
        exact acc_step d L fl tab (wL L).val (2 * t1.val + 1) (2 * k.val) 0 _ hRA ⟨30, by decide⟩ ⟨0, by decide⟩ _ rfl _ hw_v2171_1 _ (k1_off80_form ..) _ _
      have a_v2215_1 : pair1_next.sl.v2215_1 d L tab k r g1 g2 hR hin = AccMath.accVec (rowF fl tab (wL L).val (2 * t1.val + 1) (2 * k.val)) (offF fl (wL L).val (2 * t1.val + 1) (2 * k.val)) 0 32 := by
        rw [show pair1_next.sl.v2215_1 d L tab k r g1 g2 hR hin = addf (pair1_next.sl.v2179_1 d L tab k r g1 g2 hR hin) (pair1_next.sl.v2214_1 d L tab k r g1 g2 hR hin) from rfl, a_v2179_1]
        exact acc_step d L fl tab (wL L).val (2 * t1.val + 1) (2 * k.val) 0 _ hRA ⟨31, by decide⟩ ⟨0, by decide⟩ _ rfl _ hw_v2207_1 _ (k1_off81_form ..) _ _
      have a_v1675_2 : pair1_next.sl.v1675_2 d L tab k r g1 g2 hR hin = AccMath.accVec (rowF fl tab (wL L).val (2 * t1.val + 1) (2 * k.val)) (offF fl (wL L).val (2 * t1.val + 1) (2 * k.val)) 0 33 := by
        rw [show pair1_next.sl.v1675_2 d L tab k r g1 g2 hR hin = addf (pair1_next.sl.v2215_1 d L tab k r g1 g2 hR hin) (pair1_next.sl.v1674_2 d L tab k r g1 g2 hR hin) from rfl, a_v2215_1]
        exact acc_step d L fl tab (wL L).val (2 * t1.val + 1) (2 * k.val) 0 _ hRA ⟨32, by decide⟩ ⟨0, by decide⟩ _ rfl _ hw_v1667_2 _ (k1_off66_form ..) _ _
      have a_v1711_2 : pair1_next.sl.v1711_2 d L tab k r g1 g2 hR hin = AccMath.accVec (rowF fl tab (wL L).val (2 * t1.val + 1) (2 * k.val)) (offF fl (wL L).val (2 * t1.val + 1) (2 * k.val)) 0 34 := by
        rw [show pair1_next.sl.v1711_2 d L tab k r g1 g2 hR hin = addf (pair1_next.sl.v1675_2 d L tab k r g1 g2 hR hin) (pair1_next.sl.v1710_2 d L tab k r g1 g2 hR hin) from rfl, a_v1675_2]
        exact acc_step d L fl tab (wL L).val (2 * t1.val + 1) (2 * k.val) 0 _ hRA ⟨33, by decide⟩ ⟨0, by decide⟩ _ rfl _ hw_v1703_2 _ (k1_off67_form ..) _ _
      have a_v1747_2 : pair1_next.sl.v1747_2 d L tab k r g1 g2 hR hin = AccMath.accVec (rowF fl tab (wL L).val (2 * t1.val + 1) (2 * k.val)) (offF fl (wL L).val (2 * t1.val + 1) (2 * k.val)) 0 35 := by
        rw [show pair1_next.sl.v1747_2 d L tab k r g1 g2 hR hin = addf (pair1_next.sl.v1711_2 d L tab k r g1 g2 hR hin) (pair1_next.sl.v1746_2 d L tab k r g1 g2 hR hin) from rfl, a_v1711_2]
        exact acc_step d L fl tab (wL L).val (2 * t1.val + 1) (2 * k.val) 0 _ hRA ⟨34, by decide⟩ ⟨0, by decide⟩ _ rfl _ hw_v1739_2 _ (k1_off68_form ..) _ _
      have a_v1783_2 : pair1_next.sl.v1783_2 d L tab k r g1 g2 hR hin = AccMath.accVec (rowF fl tab (wL L).val (2 * t1.val + 1) (2 * k.val)) (offF fl (wL L).val (2 * t1.val + 1) (2 * k.val)) 0 36 := by
        rw [show pair1_next.sl.v1783_2 d L tab k r g1 g2 hR hin = addf (pair1_next.sl.v1747_2 d L tab k r g1 g2 hR hin) (pair1_next.sl.v1782_2 d L tab k r g1 g2 hR hin) from rfl, a_v1747_2]
        exact acc_step d L fl tab (wL L).val (2 * t1.val + 1) (2 * k.val) 0 _ hRA ⟨35, by decide⟩ ⟨0, by decide⟩ _ rfl _ hw_v1775_2 _ (k1_off69_form ..) _ _
      have a_v1819_2 : pair1_next.sl.v1819_2 d L tab k r g1 g2 hR hin = AccMath.accVec (rowF fl tab (wL L).val (2 * t1.val + 1) (2 * k.val)) (offF fl (wL L).val (2 * t1.val + 1) (2 * k.val)) 0 37 := by
        rw [show pair1_next.sl.v1819_2 d L tab k r g1 g2 hR hin = addf (pair1_next.sl.v1783_2 d L tab k r g1 g2 hR hin) (pair1_next.sl.v1818_2 d L tab k r g1 g2 hR hin) from rfl, a_v1783_2]
        exact acc_step d L fl tab (wL L).val (2 * t1.val + 1) (2 * k.val) 0 _ hRA ⟨36, by decide⟩ ⟨0, by decide⟩ _ rfl _ hw_v1811_2 _ (k1_off70_form ..) _ _
      have a_v1855_2 : pair1_next.sl.v1855_2 d L tab k r g1 g2 hR hin = AccMath.accVec (rowF fl tab (wL L).val (2 * t1.val + 1) (2 * k.val)) (offF fl (wL L).val (2 * t1.val + 1) (2 * k.val)) 0 38 := by
        rw [show pair1_next.sl.v1855_2 d L tab k r g1 g2 hR hin = addf (pair1_next.sl.v1819_2 d L tab k r g1 g2 hR hin) (pair1_next.sl.v1854_2 d L tab k r g1 g2 hR hin) from rfl, a_v1819_2]
        exact acc_step d L fl tab (wL L).val (2 * t1.val + 1) (2 * k.val) 0 _ hRA ⟨37, by decide⟩ ⟨0, by decide⟩ _ rfl _ hw_v1847_2 _ (k1_off71_form ..) _ _
      have a_v1891_2 : pair1_next.sl.v1891_2 d L tab k r g1 g2 hR hin = AccMath.accVec (rowF fl tab (wL L).val (2 * t1.val + 1) (2 * k.val)) (offF fl (wL L).val (2 * t1.val + 1) (2 * k.val)) 0 39 := by
        rw [show pair1_next.sl.v1891_2 d L tab k r g1 g2 hR hin = addf (pair1_next.sl.v1855_2 d L tab k r g1 g2 hR hin) (pair1_next.sl.v1890_2 d L tab k r g1 g2 hR hin) from rfl, a_v1855_2]
        exact acc_step d L fl tab (wL L).val (2 * t1.val + 1) (2 * k.val) 0 _ hRA ⟨38, by decide⟩ ⟨0, by decide⟩ _ rfl _ hw_v1883_2 _ (k1_off72_form ..) _ _
      have a_v1927_2 : pair1_next.sl.v1927_2 d L tab k r g1 g2 hR hin = AccMath.accVec (rowF fl tab (wL L).val (2 * t1.val + 1) (2 * k.val)) (offF fl (wL L).val (2 * t1.val + 1) (2 * k.val)) 0 40 := by
        rw [show pair1_next.sl.v1927_2 d L tab k r g1 g2 hR hin = addf (pair1_next.sl.v1891_2 d L tab k r g1 g2 hR hin) (pair1_next.sl.v1926_2 d L tab k r g1 g2 hR hin) from rfl, a_v1891_2]
        exact acc_step d L fl tab (wL L).val (2 * t1.val + 1) (2 * k.val) 0 _ hRA ⟨39, by decide⟩ ⟨0, by decide⟩ _ rfl _ hw_v1919_2 _ (k1_off73_form ..) _ _
      have a_v1963_2 : pair1_next.sl.v1963_2 d L tab k r g1 g2 hR hin = AccMath.accVec (rowF fl tab (wL L).val (2 * t1.val + 1) (2 * k.val)) (offF fl (wL L).val (2 * t1.val + 1) (2 * k.val)) 0 41 := by
        rw [show pair1_next.sl.v1963_2 d L tab k r g1 g2 hR hin = addf (pair1_next.sl.v1927_2 d L tab k r g1 g2 hR hin) (pair1_next.sl.v1962_2 d L tab k r g1 g2 hR hin) from rfl, a_v1927_2]
        exact acc_step d L fl tab (wL L).val (2 * t1.val + 1) (2 * k.val) 0 _ hRA ⟨40, by decide⟩ ⟨0, by decide⟩ _ rfl _ hw_v1955_2 _ (k1_off74_form ..) _ _
      have a_v1999_2 : pair1_next.sl.v1999_2 d L tab k r g1 g2 hR hin = AccMath.accVec (rowF fl tab (wL L).val (2 * t1.val + 1) (2 * k.val)) (offF fl (wL L).val (2 * t1.val + 1) (2 * k.val)) 0 42 := by
        rw [show pair1_next.sl.v1999_2 d L tab k r g1 g2 hR hin = addf (pair1_next.sl.v1963_2 d L tab k r g1 g2 hR hin) (pair1_next.sl.v1998_2 d L tab k r g1 g2 hR hin) from rfl, a_v1963_2]
        exact acc_step d L fl tab (wL L).val (2 * t1.val + 1) (2 * k.val) 0 _ hRA ⟨41, by decide⟩ ⟨0, by decide⟩ _ rfl _ hw_v1991_2 _ (k1_off75_form ..) _ _
      have a_v2035_2 : pair1_next.sl.v2035_2 d L tab k r g1 g2 hR hin = AccMath.accVec (rowF fl tab (wL L).val (2 * t1.val + 1) (2 * k.val)) (offF fl (wL L).val (2 * t1.val + 1) (2 * k.val)) 0 43 := by
        rw [show pair1_next.sl.v2035_2 d L tab k r g1 g2 hR hin = addf (pair1_next.sl.v1999_2 d L tab k r g1 g2 hR hin) (pair1_next.sl.v2034_2 d L tab k r g1 g2 hR hin) from rfl, a_v1999_2]
        exact acc_step d L fl tab (wL L).val (2 * t1.val + 1) (2 * k.val) 0 _ hRA ⟨42, by decide⟩ ⟨0, by decide⟩ _ rfl _ hw_v2027_2 _ (k1_off76_form ..) _ _
      have a_v2071_2 : pair1_next.sl.v2071_2 d L tab k r g1 g2 hR hin = AccMath.accVec (rowF fl tab (wL L).val (2 * t1.val + 1) (2 * k.val)) (offF fl (wL L).val (2 * t1.val + 1) (2 * k.val)) 0 44 := by
        rw [show pair1_next.sl.v2071_2 d L tab k r g1 g2 hR hin = addf (pair1_next.sl.v2035_2 d L tab k r g1 g2 hR hin) (pair1_next.sl.v2070_2 d L tab k r g1 g2 hR hin) from rfl, a_v2035_2]
        exact acc_step d L fl tab (wL L).val (2 * t1.val + 1) (2 * k.val) 0 _ hRA ⟨43, by decide⟩ ⟨0, by decide⟩ _ rfl _ hw_v2063_2 _ (k1_off77_form ..) _ _
      have a_v2107_2 : pair1_next.sl.v2107_2 d L tab k r g1 g2 hR hin = AccMath.accVec (rowF fl tab (wL L).val (2 * t1.val + 1) (2 * k.val)) (offF fl (wL L).val (2 * t1.val + 1) (2 * k.val)) 0 45 := by
        rw [show pair1_next.sl.v2107_2 d L tab k r g1 g2 hR hin = addf (pair1_next.sl.v2071_2 d L tab k r g1 g2 hR hin) (pair1_next.sl.v2106_2 d L tab k r g1 g2 hR hin) from rfl, a_v2071_2]
        exact acc_step d L fl tab (wL L).val (2 * t1.val + 1) (2 * k.val) 0 _ hRA ⟨44, by decide⟩ ⟨0, by decide⟩ _ rfl _ hw_v2099_2 _ (k1_off78_form ..) _ _
      have a_v2143_2 : pair1_next.sl.v2143_2 d L tab k r g1 g2 hR hin = AccMath.accVec (rowF fl tab (wL L).val (2 * t1.val + 1) (2 * k.val)) (offF fl (wL L).val (2 * t1.val + 1) (2 * k.val)) 0 46 := by
        rw [show pair1_next.sl.v2143_2 d L tab k r g1 g2 hR hin = addf (pair1_next.sl.v2107_2 d L tab k r g1 g2 hR hin) (pair1_next.sl.v2142_2 d L tab k r g1 g2 hR hin) from rfl, a_v2107_2]
        exact acc_step d L fl tab (wL L).val (2 * t1.val + 1) (2 * k.val) 0 _ hRA ⟨45, by decide⟩ ⟨0, by decide⟩ _ rfl _ hw_v2135_2 _ (k1_off79_form ..) _ _
      have a_v2179_2 : pair1_next.sl.v2179_2 d L tab k r g1 g2 hR hin = AccMath.accVec (rowF fl tab (wL L).val (2 * t1.val + 1) (2 * k.val)) (offF fl (wL L).val (2 * t1.val + 1) (2 * k.val)) 0 47 := by
        rw [show pair1_next.sl.v2179_2 d L tab k r g1 g2 hR hin = addf (pair1_next.sl.v2143_2 d L tab k r g1 g2 hR hin) (pair1_next.sl.v2178_2 d L tab k r g1 g2 hR hin) from rfl, a_v2143_2]
        exact acc_step d L fl tab (wL L).val (2 * t1.val + 1) (2 * k.val) 0 _ hRA ⟨46, by decide⟩ ⟨0, by decide⟩ _ rfl _ hw_v2171_2 _ (k1_off80_form ..) _ _
      have a_v2215_2 : pair1_next.sl.v2215_2 d L tab k r g1 g2 hR hin = AccMath.accVec (rowF fl tab (wL L).val (2 * t1.val + 1) (2 * k.val)) (offF fl (wL L).val (2 * t1.val + 1) (2 * k.val)) 0 48 := by
        rw [show pair1_next.sl.v2215_2 d L tab k r g1 g2 hR hin = addf (pair1_next.sl.v2179_2 d L tab k r g1 g2 hR hin) (pair1_next.sl.v2214_2 d L tab k r g1 g2 hR hin) from rfl, a_v2179_2]
        exact acc_step d L fl tab (wL L).val (2 * t1.val + 1) (2 * k.val) 0 _ hRA ⟨47, by decide⟩ ⟨0, by decide⟩ _ rfl _ hw_v2207_2 _ (k1_off81_form ..) _ _
      have a_v1464 : pair1_next.sl.v1464 d L tab k r g1 g2 hR hin = AccMath.accVec (rowF fl tab (wL L).val (2 * t1.val + 1) (2 * k.val)) (offF fl (wL L).val (2 * t1.val + 1) (2 * k.val)) 0 49 := by
        rw [show pair1_next.sl.v1464 d L tab k r g1 g2 hR hin = addf (pair1_next.sl.v2215_2 d L tab k r g1 g2 hR hin) (pair1_next.sl.v1463 d L tab k r g1 g2 hR hin) from rfl, a_v2215_2]
        exact acc_step d L fl tab (wL L).val (2 * t1.val + 1) (2 * k.val) 0 _ hRA ⟨48, by decide⟩ ⟨0, by decide⟩ _ rfl _ hw_v1456 _ (k1_off83_form ..) _ _
      have a_v1498 : pair1_next.sl.v1498 d L tab k r g1 g2 hR hin = AccMath.accVec (rowF fl tab (wL L).val (2 * t1.val + 1) (2 * k.val)) (offF fl (wL L).val (2 * t1.val + 1) (2 * k.val)) 0 50 := by
        rw [show pair1_next.sl.v1498 d L tab k r g1 g2 hR hin = addf (pair1_next.sl.v1464 d L tab k r g1 g2 hR hin) (pair1_next.sl.v1497 d L tab k r g1 g2 hR hin) from rfl, a_v1464]
        exact acc_step d L fl tab (wL L).val (2 * t1.val + 1) (2 * k.val) 0 _ hRA ⟨49, by decide⟩ ⟨0, by decide⟩ _ rfl _ hw_v1490 _ (k1_off84_form ..) _ _
      have a_v1445_A1 : pair1_next.sl.v1445 = AccMath.accVec (rowF fl tab (wL L).val (2 * t1.val + 1) (2 * k.val)) (offF fl (wL L).val (2 * t1.val + 1) (2 * k.val)) 1 0 := acc_zero fl tab (wL L).val (2 * t1.val + 1) (2 * k.val) 1
      have a_v1683 : pair1_next.sl.v1683 d L tab k r g1 g2 hR hin = AccMath.accVec (rowF fl tab (wL L).val (2 * t1.val + 1) (2 * k.val)) (offF fl (wL L).val (2 * t1.val + 1) (2 * k.val)) 1 1 := by
        rw [show pair1_next.sl.v1683 d L tab k r g1 g2 hR hin = addf (pair1_next.sl.v1445) (pair1_next.sl.v1682 d L tab k r g1 g2 hR hin) from rfl, a_v1445_A1]
        exact acc_step d L fl tab (wL L).val (2 * t1.val + 1) (2 * k.val) 0 _ hRA ⟨0, by decide⟩ ⟨1, by decide⟩ _ rfl _ hw_v1667 _ (k1_off66_form ..) _ _
      have a_v1719 : pair1_next.sl.v1719 d L tab k r g1 g2 hR hin = AccMath.accVec (rowF fl tab (wL L).val (2 * t1.val + 1) (2 * k.val)) (offF fl (wL L).val (2 * t1.val + 1) (2 * k.val)) 1 2 := by
        rw [show pair1_next.sl.v1719 d L tab k r g1 g2 hR hin = addf (pair1_next.sl.v1683 d L tab k r g1 g2 hR hin) (pair1_next.sl.v1718 d L tab k r g1 g2 hR hin) from rfl, a_v1683]
        exact acc_step d L fl tab (wL L).val (2 * t1.val + 1) (2 * k.val) 0 _ hRA ⟨1, by decide⟩ ⟨1, by decide⟩ _ rfl _ hw_v1703 _ (k1_off67_form ..) _ _
      have a_v1755 : pair1_next.sl.v1755 d L tab k r g1 g2 hR hin = AccMath.accVec (rowF fl tab (wL L).val (2 * t1.val + 1) (2 * k.val)) (offF fl (wL L).val (2 * t1.val + 1) (2 * k.val)) 1 3 := by
        rw [show pair1_next.sl.v1755 d L tab k r g1 g2 hR hin = addf (pair1_next.sl.v1719 d L tab k r g1 g2 hR hin) (pair1_next.sl.v1754 d L tab k r g1 g2 hR hin) from rfl, a_v1719]
        exact acc_step d L fl tab (wL L).val (2 * t1.val + 1) (2 * k.val) 0 _ hRA ⟨2, by decide⟩ ⟨1, by decide⟩ _ rfl _ hw_v1739 _ (k1_off68_form ..) _ _
      have a_v1791 : pair1_next.sl.v1791 d L tab k r g1 g2 hR hin = AccMath.accVec (rowF fl tab (wL L).val (2 * t1.val + 1) (2 * k.val)) (offF fl (wL L).val (2 * t1.val + 1) (2 * k.val)) 1 4 := by
        rw [show pair1_next.sl.v1791 d L tab k r g1 g2 hR hin = addf (pair1_next.sl.v1755 d L tab k r g1 g2 hR hin) (pair1_next.sl.v1790 d L tab k r g1 g2 hR hin) from rfl, a_v1755]
        exact acc_step d L fl tab (wL L).val (2 * t1.val + 1) (2 * k.val) 0 _ hRA ⟨3, by decide⟩ ⟨1, by decide⟩ _ rfl _ hw_v1775 _ (k1_off69_form ..) _ _
      have a_v1827 : pair1_next.sl.v1827 d L tab k r g1 g2 hR hin = AccMath.accVec (rowF fl tab (wL L).val (2 * t1.val + 1) (2 * k.val)) (offF fl (wL L).val (2 * t1.val + 1) (2 * k.val)) 1 5 := by
        rw [show pair1_next.sl.v1827 d L tab k r g1 g2 hR hin = addf (pair1_next.sl.v1791 d L tab k r g1 g2 hR hin) (pair1_next.sl.v1826 d L tab k r g1 g2 hR hin) from rfl, a_v1791]
        exact acc_step d L fl tab (wL L).val (2 * t1.val + 1) (2 * k.val) 0 _ hRA ⟨4, by decide⟩ ⟨1, by decide⟩ _ rfl _ hw_v1811 _ (k1_off70_form ..) _ _
      have a_v1863 : pair1_next.sl.v1863 d L tab k r g1 g2 hR hin = AccMath.accVec (rowF fl tab (wL L).val (2 * t1.val + 1) (2 * k.val)) (offF fl (wL L).val (2 * t1.val + 1) (2 * k.val)) 1 6 := by
        rw [show pair1_next.sl.v1863 d L tab k r g1 g2 hR hin = addf (pair1_next.sl.v1827 d L tab k r g1 g2 hR hin) (pair1_next.sl.v1862 d L tab k r g1 g2 hR hin) from rfl, a_v1827]
        exact acc_step d L fl tab (wL L).val (2 * t1.val + 1) (2 * k.val) 0 _ hRA ⟨5, by decide⟩ ⟨1, by decide⟩ _ rfl _ hw_v1847 _ (k1_off71_form ..) _ _
      have a_v1899 : pair1_next.sl.v1899 d L tab k r g1 g2 hR hin = AccMath.accVec (rowF fl tab (wL L).val (2 * t1.val + 1) (2 * k.val)) (offF fl (wL L).val (2 * t1.val + 1) (2 * k.val)) 1 7 := by
        rw [show pair1_next.sl.v1899 d L tab k r g1 g2 hR hin = addf (pair1_next.sl.v1863 d L tab k r g1 g2 hR hin) (pair1_next.sl.v1898 d L tab k r g1 g2 hR hin) from rfl, a_v1863]
        exact acc_step d L fl tab (wL L).val (2 * t1.val + 1) (2 * k.val) 0 _ hRA ⟨6, by decide⟩ ⟨1, by decide⟩ _ rfl _ hw_v1883 _ (k1_off72_form ..) _ _
      have a_v1935 : pair1_next.sl.v1935 d L tab k r g1 g2 hR hin = AccMath.accVec (rowF fl tab (wL L).val (2 * t1.val + 1) (2 * k.val)) (offF fl (wL L).val (2 * t1.val + 1) (2 * k.val)) 1 8 := by
        rw [show pair1_next.sl.v1935 d L tab k r g1 g2 hR hin = addf (pair1_next.sl.v1899 d L tab k r g1 g2 hR hin) (pair1_next.sl.v1934 d L tab k r g1 g2 hR hin) from rfl, a_v1899]
        exact acc_step d L fl tab (wL L).val (2 * t1.val + 1) (2 * k.val) 0 _ hRA ⟨7, by decide⟩ ⟨1, by decide⟩ _ rfl _ hw_v1919 _ (k1_off73_form ..) _ _
      have a_v1971 : pair1_next.sl.v1971 d L tab k r g1 g2 hR hin = AccMath.accVec (rowF fl tab (wL L).val (2 * t1.val + 1) (2 * k.val)) (offF fl (wL L).val (2 * t1.val + 1) (2 * k.val)) 1 9 := by
        rw [show pair1_next.sl.v1971 d L tab k r g1 g2 hR hin = addf (pair1_next.sl.v1935 d L tab k r g1 g2 hR hin) (pair1_next.sl.v1970 d L tab k r g1 g2 hR hin) from rfl, a_v1935]
        exact acc_step d L fl tab (wL L).val (2 * t1.val + 1) (2 * k.val) 0 _ hRA ⟨8, by decide⟩ ⟨1, by decide⟩ _ rfl _ hw_v1955 _ (k1_off74_form ..) _ _
      have a_v2007 : pair1_next.sl.v2007 d L tab k r g1 g2 hR hin = AccMath.accVec (rowF fl tab (wL L).val (2 * t1.val + 1) (2 * k.val)) (offF fl (wL L).val (2 * t1.val + 1) (2 * k.val)) 1 10 := by
        rw [show pair1_next.sl.v2007 d L tab k r g1 g2 hR hin = addf (pair1_next.sl.v1971 d L tab k r g1 g2 hR hin) (pair1_next.sl.v2006 d L tab k r g1 g2 hR hin) from rfl, a_v1971]
        exact acc_step d L fl tab (wL L).val (2 * t1.val + 1) (2 * k.val) 0 _ hRA ⟨9, by decide⟩ ⟨1, by decide⟩ _ rfl _ hw_v1991 _ (k1_off75_form ..) _ _
      have a_v2043 : pair1_next.sl.v2043 d L tab k r g1 g2 hR hin = AccMath.accVec (rowF fl tab (wL L).val (2 * t1.val + 1) (2 * k.val)) (offF fl (wL L).val (2 * t1.val + 1) (2 * k.val)) 1 11 := by
        rw [show pair1_next.sl.v2043 d L tab k r g1 g2 hR hin = addf (pair1_next.sl.v2007 d L tab k r g1 g2 hR hin) (pair1_next.sl.v2042 d L tab k r g1 g2 hR hin) from rfl, a_v2007]
        exact acc_step d L fl tab (wL L).val (2 * t1.val + 1) (2 * k.val) 0 _ hRA ⟨10, by decide⟩ ⟨1, by decide⟩ _ rfl _ hw_v2027 _ (k1_off76_form ..) _ _
      have a_v2079 : pair1_next.sl.v2079 d L tab k r g1 g2 hR hin = AccMath.accVec (rowF fl tab (wL L).val (2 * t1.val + 1) (2 * k.val)) (offF fl (wL L).val (2 * t1.val + 1) (2 * k.val)) 1 12 := by
        rw [show pair1_next.sl.v2079 d L tab k r g1 g2 hR hin = addf (pair1_next.sl.v2043 d L tab k r g1 g2 hR hin) (pair1_next.sl.v2078 d L tab k r g1 g2 hR hin) from rfl, a_v2043]
        exact acc_step d L fl tab (wL L).val (2 * t1.val + 1) (2 * k.val) 0 _ hRA ⟨11, by decide⟩ ⟨1, by decide⟩ _ rfl _ hw_v2063 _ (k1_off77_form ..) _ _
      have a_v2115 : pair1_next.sl.v2115 d L tab k r g1 g2 hR hin = AccMath.accVec (rowF fl tab (wL L).val (2 * t1.val + 1) (2 * k.val)) (offF fl (wL L).val (2 * t1.val + 1) (2 * k.val)) 1 13 := by
        rw [show pair1_next.sl.v2115 d L tab k r g1 g2 hR hin = addf (pair1_next.sl.v2079 d L tab k r g1 g2 hR hin) (pair1_next.sl.v2114 d L tab k r g1 g2 hR hin) from rfl, a_v2079]
        exact acc_step d L fl tab (wL L).val (2 * t1.val + 1) (2 * k.val) 0 _ hRA ⟨12, by decide⟩ ⟨1, by decide⟩ _ rfl _ hw_v2099 _ (k1_off78_form ..) _ _
      have a_v2151 : pair1_next.sl.v2151 d L tab k r g1 g2 hR hin = AccMath.accVec (rowF fl tab (wL L).val (2 * t1.val + 1) (2 * k.val)) (offF fl (wL L).val (2 * t1.val + 1) (2 * k.val)) 1 14 := by
        rw [show pair1_next.sl.v2151 d L tab k r g1 g2 hR hin = addf (pair1_next.sl.v2115 d L tab k r g1 g2 hR hin) (pair1_next.sl.v2150 d L tab k r g1 g2 hR hin) from rfl, a_v2115]
        exact acc_step d L fl tab (wL L).val (2 * t1.val + 1) (2 * k.val) 0 _ hRA ⟨13, by decide⟩ ⟨1, by decide⟩ _ rfl _ hw_v2135 _ (k1_off79_form ..) _ _
      have a_v2187 : pair1_next.sl.v2187 d L tab k r g1 g2 hR hin = AccMath.accVec (rowF fl tab (wL L).val (2 * t1.val + 1) (2 * k.val)) (offF fl (wL L).val (2 * t1.val + 1) (2 * k.val)) 1 15 := by
        rw [show pair1_next.sl.v2187 d L tab k r g1 g2 hR hin = addf (pair1_next.sl.v2151 d L tab k r g1 g2 hR hin) (pair1_next.sl.v2186 d L tab k r g1 g2 hR hin) from rfl, a_v2151]
        exact acc_step d L fl tab (wL L).val (2 * t1.val + 1) (2 * k.val) 0 _ hRA ⟨14, by decide⟩ ⟨1, by decide⟩ _ rfl _ hw_v2171 _ (k1_off80_form ..) _ _
      have a_v2223 : pair1_next.sl.v2223 d L tab k r g1 g2 hR hin = AccMath.accVec (rowF fl tab (wL L).val (2 * t1.val + 1) (2 * k.val)) (offF fl (wL L).val (2 * t1.val + 1) (2 * k.val)) 1 16 := by
        rw [show pair1_next.sl.v2223 d L tab k r g1 g2 hR hin = addf (pair1_next.sl.v2187 d L tab k r g1 g2 hR hin) (pair1_next.sl.v2222 d L tab k r g1 g2 hR hin) from rfl, a_v2187]
        exact acc_step d L fl tab (wL L).val (2 * t1.val + 1) (2 * k.val) 0 _ hRA ⟨15, by decide⟩ ⟨1, by decide⟩ _ rfl _ hw_v2207 _ (k1_off81_form ..) _ _
      have a_v1683_1 : pair1_next.sl.v1683_1 d L tab k r g1 g2 hR hin = AccMath.accVec (rowF fl tab (wL L).val (2 * t1.val + 1) (2 * k.val)) (offF fl (wL L).val (2 * t1.val + 1) (2 * k.val)) 1 17 := by
        rw [show pair1_next.sl.v1683_1 d L tab k r g1 g2 hR hin = addf (pair1_next.sl.v2223 d L tab k r g1 g2 hR hin) (pair1_next.sl.v1682_1 d L tab k r g1 g2 hR hin) from rfl, a_v2223]
        exact acc_step d L fl tab (wL L).val (2 * t1.val + 1) (2 * k.val) 0 _ hRA ⟨16, by decide⟩ ⟨1, by decide⟩ _ rfl _ hw_v1667_1 _ (k1_off66_form ..) _ _
      have a_v1719_1 : pair1_next.sl.v1719_1 d L tab k r g1 g2 hR hin = AccMath.accVec (rowF fl tab (wL L).val (2 * t1.val + 1) (2 * k.val)) (offF fl (wL L).val (2 * t1.val + 1) (2 * k.val)) 1 18 := by
        rw [show pair1_next.sl.v1719_1 d L tab k r g1 g2 hR hin = addf (pair1_next.sl.v1683_1 d L tab k r g1 g2 hR hin) (pair1_next.sl.v1718_1 d L tab k r g1 g2 hR hin) from rfl, a_v1683_1]
        exact acc_step d L fl tab (wL L).val (2 * t1.val + 1) (2 * k.val) 0 _ hRA ⟨17, by decide⟩ ⟨1, by decide⟩ _ rfl _ hw_v1703_1 _ (k1_off67_form ..) _ _
      have a_v1755_1 : pair1_next.sl.v1755_1 d L tab k r g1 g2 hR hin = AccMath.accVec (rowF fl tab (wL L).val (2 * t1.val + 1) (2 * k.val)) (offF fl (wL L).val (2 * t1.val + 1) (2 * k.val)) 1 19 := by
        rw [show pair1_next.sl.v1755_1 d L tab k r g1 g2 hR hin = addf (pair1_next.sl.v1719_1 d L tab k r g1 g2 hR hin) (pair1_next.sl.v1754_1 d L tab k r g1 g2 hR hin) from rfl, a_v1719_1]
        exact acc_step d L fl tab (wL L).val (2 * t1.val + 1) (2 * k.val) 0 _ hRA ⟨18, by decide⟩ ⟨1, by decide⟩ _ rfl _ hw_v1739_1 _ (k1_off68_form ..) _ _
      have a_v1791_1 : pair1_next.sl.v1791_1 d L tab k r g1 g2 hR hin = AccMath.accVec (rowF fl tab (wL L).val (2 * t1.val + 1) (2 * k.val)) (offF fl (wL L).val (2 * t1.val + 1) (2 * k.val)) 1 20 := by
        rw [show pair1_next.sl.v1791_1 d L tab k r g1 g2 hR hin = addf (pair1_next.sl.v1755_1 d L tab k r g1 g2 hR hin) (pair1_next.sl.v1790_1 d L tab k r g1 g2 hR hin) from rfl, a_v1755_1]
        exact acc_step d L fl tab (wL L).val (2 * t1.val + 1) (2 * k.val) 0 _ hRA ⟨19, by decide⟩ ⟨1, by decide⟩ _ rfl _ hw_v1775_1 _ (k1_off69_form ..) _ _
      have a_v1827_1 : pair1_next.sl.v1827_1 d L tab k r g1 g2 hR hin = AccMath.accVec (rowF fl tab (wL L).val (2 * t1.val + 1) (2 * k.val)) (offF fl (wL L).val (2 * t1.val + 1) (2 * k.val)) 1 21 := by
        rw [show pair1_next.sl.v1827_1 d L tab k r g1 g2 hR hin = addf (pair1_next.sl.v1791_1 d L tab k r g1 g2 hR hin) (pair1_next.sl.v1826_1 d L tab k r g1 g2 hR hin) from rfl, a_v1791_1]
        exact acc_step d L fl tab (wL L).val (2 * t1.val + 1) (2 * k.val) 0 _ hRA ⟨20, by decide⟩ ⟨1, by decide⟩ _ rfl _ hw_v1811_1 _ (k1_off70_form ..) _ _
      have a_v1863_1 : pair1_next.sl.v1863_1 d L tab k r g1 g2 hR hin = AccMath.accVec (rowF fl tab (wL L).val (2 * t1.val + 1) (2 * k.val)) (offF fl (wL L).val (2 * t1.val + 1) (2 * k.val)) 1 22 := by
        rw [show pair1_next.sl.v1863_1 d L tab k r g1 g2 hR hin = addf (pair1_next.sl.v1827_1 d L tab k r g1 g2 hR hin) (pair1_next.sl.v1862_1 d L tab k r g1 g2 hR hin) from rfl, a_v1827_1]
        exact acc_step d L fl tab (wL L).val (2 * t1.val + 1) (2 * k.val) 0 _ hRA ⟨21, by decide⟩ ⟨1, by decide⟩ _ rfl _ hw_v1847_1 _ (k1_off71_form ..) _ _
      have a_v1899_1 : pair1_next.sl.v1899_1 d L tab k r g1 g2 hR hin = AccMath.accVec (rowF fl tab (wL L).val (2 * t1.val + 1) (2 * k.val)) (offF fl (wL L).val (2 * t1.val + 1) (2 * k.val)) 1 23 := by
        rw [show pair1_next.sl.v1899_1 d L tab k r g1 g2 hR hin = addf (pair1_next.sl.v1863_1 d L tab k r g1 g2 hR hin) (pair1_next.sl.v1898_1 d L tab k r g1 g2 hR hin) from rfl, a_v1863_1]
        exact acc_step d L fl tab (wL L).val (2 * t1.val + 1) (2 * k.val) 0 _ hRA ⟨22, by decide⟩ ⟨1, by decide⟩ _ rfl _ hw_v1883_1 _ (k1_off72_form ..) _ _
      have a_v1935_1 : pair1_next.sl.v1935_1 d L tab k r g1 g2 hR hin = AccMath.accVec (rowF fl tab (wL L).val (2 * t1.val + 1) (2 * k.val)) (offF fl (wL L).val (2 * t1.val + 1) (2 * k.val)) 1 24 := by
        rw [show pair1_next.sl.v1935_1 d L tab k r g1 g2 hR hin = addf (pair1_next.sl.v1899_1 d L tab k r g1 g2 hR hin) (pair1_next.sl.v1934_1 d L tab k r g1 g2 hR hin) from rfl, a_v1899_1]
        exact acc_step d L fl tab (wL L).val (2 * t1.val + 1) (2 * k.val) 0 _ hRA ⟨23, by decide⟩ ⟨1, by decide⟩ _ rfl _ hw_v1919_1 _ (k1_off73_form ..) _ _
      have a_v1971_1 : pair1_next.sl.v1971_1 d L tab k r g1 g2 hR hin = AccMath.accVec (rowF fl tab (wL L).val (2 * t1.val + 1) (2 * k.val)) (offF fl (wL L).val (2 * t1.val + 1) (2 * k.val)) 1 25 := by
        rw [show pair1_next.sl.v1971_1 d L tab k r g1 g2 hR hin = addf (pair1_next.sl.v1935_1 d L tab k r g1 g2 hR hin) (pair1_next.sl.v1970_1 d L tab k r g1 g2 hR hin) from rfl, a_v1935_1]
        exact acc_step d L fl tab (wL L).val (2 * t1.val + 1) (2 * k.val) 0 _ hRA ⟨24, by decide⟩ ⟨1, by decide⟩ _ rfl _ hw_v1955_1 _ (k1_off74_form ..) _ _
      have a_v2007_1 : pair1_next.sl.v2007_1 d L tab k r g1 g2 hR hin = AccMath.accVec (rowF fl tab (wL L).val (2 * t1.val + 1) (2 * k.val)) (offF fl (wL L).val (2 * t1.val + 1) (2 * k.val)) 1 26 := by
        rw [show pair1_next.sl.v2007_1 d L tab k r g1 g2 hR hin = addf (pair1_next.sl.v1971_1 d L tab k r g1 g2 hR hin) (pair1_next.sl.v2006_1 d L tab k r g1 g2 hR hin) from rfl, a_v1971_1]
        exact acc_step d L fl tab (wL L).val (2 * t1.val + 1) (2 * k.val) 0 _ hRA ⟨25, by decide⟩ ⟨1, by decide⟩ _ rfl _ hw_v1991_1 _ (k1_off75_form ..) _ _
      have a_v2043_1 : pair1_next.sl.v2043_1 d L tab k r g1 g2 hR hin = AccMath.accVec (rowF fl tab (wL L).val (2 * t1.val + 1) (2 * k.val)) (offF fl (wL L).val (2 * t1.val + 1) (2 * k.val)) 1 27 := by
        rw [show pair1_next.sl.v2043_1 d L tab k r g1 g2 hR hin = addf (pair1_next.sl.v2007_1 d L tab k r g1 g2 hR hin) (pair1_next.sl.v2042_1 d L tab k r g1 g2 hR hin) from rfl, a_v2007_1]
        exact acc_step d L fl tab (wL L).val (2 * t1.val + 1) (2 * k.val) 0 _ hRA ⟨26, by decide⟩ ⟨1, by decide⟩ _ rfl _ hw_v2027_1 _ (k1_off76_form ..) _ _
      have a_v2079_1 : pair1_next.sl.v2079_1 d L tab k r g1 g2 hR hin = AccMath.accVec (rowF fl tab (wL L).val (2 * t1.val + 1) (2 * k.val)) (offF fl (wL L).val (2 * t1.val + 1) (2 * k.val)) 1 28 := by
        rw [show pair1_next.sl.v2079_1 d L tab k r g1 g2 hR hin = addf (pair1_next.sl.v2043_1 d L tab k r g1 g2 hR hin) (pair1_next.sl.v2078_1 d L tab k r g1 g2 hR hin) from rfl, a_v2043_1]
        exact acc_step d L fl tab (wL L).val (2 * t1.val + 1) (2 * k.val) 0 _ hRA ⟨27, by decide⟩ ⟨1, by decide⟩ _ rfl _ hw_v2063_1 _ (k1_off77_form ..) _ _
      have a_v2115_1 : pair1_next.sl.v2115_1 d L tab k r g1 g2 hR hin = AccMath.accVec (rowF fl tab (wL L).val (2 * t1.val + 1) (2 * k.val)) (offF fl (wL L).val (2 * t1.val + 1) (2 * k.val)) 1 29 := by
        rw [show pair1_next.sl.v2115_1 d L tab k r g1 g2 hR hin = addf (pair1_next.sl.v2079_1 d L tab k r g1 g2 hR hin) (pair1_next.sl.v2114_1 d L tab k r g1 g2 hR hin) from rfl, a_v2079_1]
        exact acc_step d L fl tab (wL L).val (2 * t1.val + 1) (2 * k.val) 0 _ hRA ⟨28, by decide⟩ ⟨1, by decide⟩ _ rfl _ hw_v2099_1 _ (k1_off78_form ..) _ _
      have a_v2151_1 : pair1_next.sl.v2151_1 d L tab k r g1 g2 hR hin = AccMath.accVec (rowF fl tab (wL L).val (2 * t1.val + 1) (2 * k.val)) (offF fl (wL L).val (2 * t1.val + 1) (2 * k.val)) 1 30 := by
        rw [show pair1_next.sl.v2151_1 d L tab k r g1 g2 hR hin = addf (pair1_next.sl.v2115_1 d L tab k r g1 g2 hR hin) (pair1_next.sl.v2150_1 d L tab k r g1 g2 hR hin) from rfl, a_v2115_1]
        exact acc_step d L fl tab (wL L).val (2 * t1.val + 1) (2 * k.val) 0 _ hRA ⟨29, by decide⟩ ⟨1, by decide⟩ _ rfl _ hw_v2135_1 _ (k1_off79_form ..) _ _
      have a_v2187_1 : pair1_next.sl.v2187_1 d L tab k r g1 g2 hR hin = AccMath.accVec (rowF fl tab (wL L).val (2 * t1.val + 1) (2 * k.val)) (offF fl (wL L).val (2 * t1.val + 1) (2 * k.val)) 1 31 := by
        rw [show pair1_next.sl.v2187_1 d L tab k r g1 g2 hR hin = addf (pair1_next.sl.v2151_1 d L tab k r g1 g2 hR hin) (pair1_next.sl.v2186_1 d L tab k r g1 g2 hR hin) from rfl, a_v2151_1]
        exact acc_step d L fl tab (wL L).val (2 * t1.val + 1) (2 * k.val) 0 _ hRA ⟨30, by decide⟩ ⟨1, by decide⟩ _ rfl _ hw_v2171_1 _ (k1_off80_form ..) _ _
      have a_v2223_1 : pair1_next.sl.v2223_1 d L tab k r g1 g2 hR hin = AccMath.accVec (rowF fl tab (wL L).val (2 * t1.val + 1) (2 * k.val)) (offF fl (wL L).val (2 * t1.val + 1) (2 * k.val)) 1 32 := by
        rw [show pair1_next.sl.v2223_1 d L tab k r g1 g2 hR hin = addf (pair1_next.sl.v2187_1 d L tab k r g1 g2 hR hin) (pair1_next.sl.v2222_1 d L tab k r g1 g2 hR hin) from rfl, a_v2187_1]
        exact acc_step d L fl tab (wL L).val (2 * t1.val + 1) (2 * k.val) 0 _ hRA ⟨31, by decide⟩ ⟨1, by decide⟩ _ rfl _ hw_v2207_1 _ (k1_off81_form ..) _ _
      have a_v1683_2 : pair1_next.sl.v1683_2 d L tab k r g1 g2 hR hin = AccMath.accVec (rowF fl tab (wL L).val (2 * t1.val + 1) (2 * k.val)) (offF fl (wL L).val (2 * t1.val + 1) (2 * k.val)) 1 33 := by
        rw [show pair1_next.sl.v1683_2 d L tab k r g1 g2 hR hin = addf (pair1_next.sl.v2223_1 d L tab k r g1 g2 hR hin) (pair1_next.sl.v1682_2 d L tab k r g1 g2 hR hin) from rfl, a_v2223_1]
        exact acc_step d L fl tab (wL L).val (2 * t1.val + 1) (2 * k.val) 0 _ hRA ⟨32, by decide⟩ ⟨1, by decide⟩ _ rfl _ hw_v1667_2 _ (k1_off66_form ..) _ _
      have a_v1719_2 : pair1_next.sl.v1719_2 d L tab k r g1 g2 hR hin = AccMath.accVec (rowF fl tab (wL L).val (2 * t1.val + 1) (2 * k.val)) (offF fl (wL L).val (2 * t1.val + 1) (2 * k.val)) 1 34 := by
        rw [show pair1_next.sl.v1719_2 d L tab k r g1 g2 hR hin = addf (pair1_next.sl.v1683_2 d L tab k r g1 g2 hR hin) (pair1_next.sl.v1718_2 d L tab k r g1 g2 hR hin) from rfl, a_v1683_2]
        exact acc_step d L fl tab (wL L).val (2 * t1.val + 1) (2 * k.val) 0 _ hRA ⟨33, by decide⟩ ⟨1, by decide⟩ _ rfl _ hw_v1703_2 _ (k1_off67_form ..) _ _
      have a_v1755_2 : pair1_next.sl.v1755_2 d L tab k r g1 g2 hR hin = AccMath.accVec (rowF fl tab (wL L).val (2 * t1.val + 1) (2 * k.val)) (offF fl (wL L).val (2 * t1.val + 1) (2 * k.val)) 1 35 := by
        rw [show pair1_next.sl.v1755_2 d L tab k r g1 g2 hR hin = addf (pair1_next.sl.v1719_2 d L tab k r g1 g2 hR hin) (pair1_next.sl.v1754_2 d L tab k r g1 g2 hR hin) from rfl, a_v1719_2]
        exact acc_step d L fl tab (wL L).val (2 * t1.val + 1) (2 * k.val) 0 _ hRA ⟨34, by decide⟩ ⟨1, by decide⟩ _ rfl _ hw_v1739_2 _ (k1_off68_form ..) _ _
      have a_v1791_2 : pair1_next.sl.v1791_2 d L tab k r g1 g2 hR hin = AccMath.accVec (rowF fl tab (wL L).val (2 * t1.val + 1) (2 * k.val)) (offF fl (wL L).val (2 * t1.val + 1) (2 * k.val)) 1 36 := by
        rw [show pair1_next.sl.v1791_2 d L tab k r g1 g2 hR hin = addf (pair1_next.sl.v1755_2 d L tab k r g1 g2 hR hin) (pair1_next.sl.v1790_2 d L tab k r g1 g2 hR hin) from rfl, a_v1755_2]
        exact acc_step d L fl tab (wL L).val (2 * t1.val + 1) (2 * k.val) 0 _ hRA ⟨35, by decide⟩ ⟨1, by decide⟩ _ rfl _ hw_v1775_2 _ (k1_off69_form ..) _ _
      have a_v1827_2 : pair1_next.sl.v1827_2 d L tab k r g1 g2 hR hin = AccMath.accVec (rowF fl tab (wL L).val (2 * t1.val + 1) (2 * k.val)) (offF fl (wL L).val (2 * t1.val + 1) (2 * k.val)) 1 37 := by
        rw [show pair1_next.sl.v1827_2 d L tab k r g1 g2 hR hin = addf (pair1_next.sl.v1791_2 d L tab k r g1 g2 hR hin) (pair1_next.sl.v1826_2 d L tab k r g1 g2 hR hin) from rfl, a_v1791_2]
        exact acc_step d L fl tab (wL L).val (2 * t1.val + 1) (2 * k.val) 0 _ hRA ⟨36, by decide⟩ ⟨1, by decide⟩ _ rfl _ hw_v1811_2 _ (k1_off70_form ..) _ _
      have a_v1863_2 : pair1_next.sl.v1863_2 d L tab k r g1 g2 hR hin = AccMath.accVec (rowF fl tab (wL L).val (2 * t1.val + 1) (2 * k.val)) (offF fl (wL L).val (2 * t1.val + 1) (2 * k.val)) 1 38 := by
        rw [show pair1_next.sl.v1863_2 d L tab k r g1 g2 hR hin = addf (pair1_next.sl.v1827_2 d L tab k r g1 g2 hR hin) (pair1_next.sl.v1862_2 d L tab k r g1 g2 hR hin) from rfl, a_v1827_2]
        exact acc_step d L fl tab (wL L).val (2 * t1.val + 1) (2 * k.val) 0 _ hRA ⟨37, by decide⟩ ⟨1, by decide⟩ _ rfl _ hw_v1847_2 _ (k1_off71_form ..) _ _
      have a_v1899_2 : pair1_next.sl.v1899_2 d L tab k r g1 g2 hR hin = AccMath.accVec (rowF fl tab (wL L).val (2 * t1.val + 1) (2 * k.val)) (offF fl (wL L).val (2 * t1.val + 1) (2 * k.val)) 1 39 := by
        rw [show pair1_next.sl.v1899_2 d L tab k r g1 g2 hR hin = addf (pair1_next.sl.v1863_2 d L tab k r g1 g2 hR hin) (pair1_next.sl.v1898_2 d L tab k r g1 g2 hR hin) from rfl, a_v1863_2]
        exact acc_step d L fl tab (wL L).val (2 * t1.val + 1) (2 * k.val) 0 _ hRA ⟨38, by decide⟩ ⟨1, by decide⟩ _ rfl _ hw_v1883_2 _ (k1_off72_form ..) _ _
      have a_v1935_2 : pair1_next.sl.v1935_2 d L tab k r g1 g2 hR hin = AccMath.accVec (rowF fl tab (wL L).val (2 * t1.val + 1) (2 * k.val)) (offF fl (wL L).val (2 * t1.val + 1) (2 * k.val)) 1 40 := by
        rw [show pair1_next.sl.v1935_2 d L tab k r g1 g2 hR hin = addf (pair1_next.sl.v1899_2 d L tab k r g1 g2 hR hin) (pair1_next.sl.v1934_2 d L tab k r g1 g2 hR hin) from rfl, a_v1899_2]
        exact acc_step d L fl tab (wL L).val (2 * t1.val + 1) (2 * k.val) 0 _ hRA ⟨39, by decide⟩ ⟨1, by decide⟩ _ rfl _ hw_v1919_2 _ (k1_off73_form ..) _ _
      have a_v1971_2 : pair1_next.sl.v1971_2 d L tab k r g1 g2 hR hin = AccMath.accVec (rowF fl tab (wL L).val (2 * t1.val + 1) (2 * k.val)) (offF fl (wL L).val (2 * t1.val + 1) (2 * k.val)) 1 41 := by
        rw [show pair1_next.sl.v1971_2 d L tab k r g1 g2 hR hin = addf (pair1_next.sl.v1935_2 d L tab k r g1 g2 hR hin) (pair1_next.sl.v1970_2 d L tab k r g1 g2 hR hin) from rfl, a_v1935_2]
        exact acc_step d L fl tab (wL L).val (2 * t1.val + 1) (2 * k.val) 0 _ hRA ⟨40, by decide⟩ ⟨1, by decide⟩ _ rfl _ hw_v1955_2 _ (k1_off74_form ..) _ _
      have a_v2007_2 : pair1_next.sl.v2007_2 d L tab k r g1 g2 hR hin = AccMath.accVec (rowF fl tab (wL L).val (2 * t1.val + 1) (2 * k.val)) (offF fl (wL L).val (2 * t1.val + 1) (2 * k.val)) 1 42 := by
        rw [show pair1_next.sl.v2007_2 d L tab k r g1 g2 hR hin = addf (pair1_next.sl.v1971_2 d L tab k r g1 g2 hR hin) (pair1_next.sl.v2006_2 d L tab k r g1 g2 hR hin) from rfl, a_v1971_2]
        exact acc_step d L fl tab (wL L).val (2 * t1.val + 1) (2 * k.val) 0 _ hRA ⟨41, by decide⟩ ⟨1, by decide⟩ _ rfl _ hw_v1991_2 _ (k1_off75_form ..) _ _
      have a_v2043_2 : pair1_next.sl.v2043_2 d L tab k r g1 g2 hR hin = AccMath.accVec (rowF fl tab (wL L).val (2 * t1.val + 1) (2 * k.val)) (offF fl (wL L).val (2 * t1.val + 1) (2 * k.val)) 1 43 := by
        rw [show pair1_next.sl.v2043_2 d L tab k r g1 g2 hR hin = addf (pair1_next.sl.v2007_2 d L tab k r g1 g2 hR hin) (pair1_next.sl.v2042_2 d L tab k r g1 g2 hR hin) from rfl, a_v2007_2]
        exact acc_step d L fl tab (wL L).val (2 * t1.val + 1) (2 * k.val) 0 _ hRA ⟨42, by decide⟩ ⟨1, by decide⟩ _ rfl _ hw_v2027_2 _ (k1_off76_form ..) _ _
      have a_v2079_2 : pair1_next.sl.v2079_2 d L tab k r g1 g2 hR hin = AccMath.accVec (rowF fl tab (wL L).val (2 * t1.val + 1) (2 * k.val)) (offF fl (wL L).val (2 * t1.val + 1) (2 * k.val)) 1 44 := by
        rw [show pair1_next.sl.v2079_2 d L tab k r g1 g2 hR hin = addf (pair1_next.sl.v2043_2 d L tab k r g1 g2 hR hin) (pair1_next.sl.v2078_2 d L tab k r g1 g2 hR hin) from rfl, a_v2043_2]
        exact acc_step d L fl tab (wL L).val (2 * t1.val + 1) (2 * k.val) 0 _ hRA ⟨43, by decide⟩ ⟨1, by decide⟩ _ rfl _ hw_v2063_2 _ (k1_off77_form ..) _ _
      have a_v2115_2 : pair1_next.sl.v2115_2 d L tab k r g1 g2 hR hin = AccMath.accVec (rowF fl tab (wL L).val (2 * t1.val + 1) (2 * k.val)) (offF fl (wL L).val (2 * t1.val + 1) (2 * k.val)) 1 45 := by
        rw [show pair1_next.sl.v2115_2 d L tab k r g1 g2 hR hin = addf (pair1_next.sl.v2079_2 d L tab k r g1 g2 hR hin) (pair1_next.sl.v2114_2 d L tab k r g1 g2 hR hin) from rfl, a_v2079_2]
        exact acc_step d L fl tab (wL L).val (2 * t1.val + 1) (2 * k.val) 0 _ hRA ⟨44, by decide⟩ ⟨1, by decide⟩ _ rfl _ hw_v2099_2 _ (k1_off78_form ..) _ _
      have a_v2151_2 : pair1_next.sl.v2151_2 d L tab k r g1 g2 hR hin = AccMath.accVec (rowF fl tab (wL L).val (2 * t1.val + 1) (2 * k.val)) (offF fl (wL L).val (2 * t1.val + 1) (2 * k.val)) 1 46 := by
        rw [show pair1_next.sl.v2151_2 d L tab k r g1 g2 hR hin = addf (pair1_next.sl.v2115_2 d L tab k r g1 g2 hR hin) (pair1_next.sl.v2150_2 d L tab k r g1 g2 hR hin) from rfl, a_v2115_2]
        exact acc_step d L fl tab (wL L).val (2 * t1.val + 1) (2 * k.val) 0 _ hRA ⟨45, by decide⟩ ⟨1, by decide⟩ _ rfl _ hw_v2135_2 _ (k1_off79_form ..) _ _
      have a_v2187_2 : pair1_next.sl.v2187_2 d L tab k r g1 g2 hR hin = AccMath.accVec (rowF fl tab (wL L).val (2 * t1.val + 1) (2 * k.val)) (offF fl (wL L).val (2 * t1.val + 1) (2 * k.val)) 1 47 := by
        rw [show pair1_next.sl.v2187_2 d L tab k r g1 g2 hR hin = addf (pair1_next.sl.v2151_2 d L tab k r g1 g2 hR hin) (pair1_next.sl.v2186_2 d L tab k r g1 g2 hR hin) from rfl, a_v2151_2]
        exact acc_step d L fl tab (wL L).val (2 * t1.val + 1) (2 * k.val) 0 _ hRA ⟨46, by decide⟩ ⟨1, by decide⟩ _ rfl _ hw_v2171_2 _ (k1_off80_form ..) _ _
      have a_v2223_2 : pair1_next.sl.v2223_2 d L tab k r g1 g2 hR hin = AccMath.accVec (rowF fl tab (wL L).val (2 * t1.val + 1) (2 * k.val)) (offF fl (wL L).val (2 * t1.val + 1) (2 * k.val)) 1 48 := by
        rw [show pair1_next.sl.v2223_2 d L tab k r g1 g2 hR hin = addf (pair1_next.sl.v2187_2 d L tab k r g1 g2 hR hin) (pair1_next.sl.v2222_2 d L tab k r g1 g2 hR hin) from rfl, a_v2187_2]
        exact acc_step d L fl tab (wL L).val (2 * t1.val + 1) (2 * k.val) 0 _ hRA ⟨47, by decide⟩ ⟨1, by decide⟩ _ rfl _ hw_v2207_2 _ (k1_off81_form ..) _ _
      have a_v1472 : pair1_next.sl.v1472 d L tab k r g1 g2 hR hin = AccMath.accVec (rowF fl tab (wL L).val (2 * t1.val + 1) (2 * k.val)) (offF fl (wL L).val (2 * t1.val + 1) (2 * k.val)) 1 49 := by
        rw [show pair1_next.sl.v1472 d L tab k r g1 g2 hR hin = addf (pair1_next.sl.v2223_2 d L tab k r g1 g2 hR hin) (pair1_next.sl.v1471 d L tab k r g1 g2 hR hin) from rfl, a_v2223_2]
        exact acc_step d L fl tab (wL L).val (2 * t1.val + 1) (2 * k.val) 0 _ hRA ⟨48, by decide⟩ ⟨1, by decide⟩ _ rfl _ hw_v1456 _ (k1_off83_form ..) _ _
      have a_v1506 : pair1_next.sl.v1506 d L tab k r g1 g2 hR hin = AccMath.accVec (rowF fl tab (wL L).val (2 * t1.val + 1) (2 * k.val)) (offF fl (wL L).val (2 * t1.val + 1) (2 * k.val)) 1 50 := by
        rw [show pair1_next.sl.v1506 d L tab k r g1 g2 hR hin = addf (pair1_next.sl.v1472 d L tab k r g1 g2 hR hin) (pair1_next.sl.v1505 d L tab k r g1 g2 hR hin) from rfl, a_v1472]
        exact acc_step d L fl tab (wL L).val (2 * t1.val + 1) (2 * k.val) 0 _ hRA ⟨49, by decide⟩ ⟨1, by decide⟩ _ rfl _ hw_v1490 _ (k1_off84_form ..) _ _
      have a_v1445_A2 : pair1_next.sl.v1445 = AccMath.accVec (rowF fl tab (wL L).val (2 * t1.val + 1) (2 * k.val)) (offF fl (wL L).val (2 * t1.val + 1) (2 * k.val)) 2 0 := acc_zero fl tab (wL L).val (2 * t1.val + 1) (2 * k.val) 2
      have a_v1691 : pair1_next.sl.v1691 d L tab k r g1 g2 hR hin = AccMath.accVec (rowF fl tab (wL L).val (2 * t1.val + 1) (2 * k.val)) (offF fl (wL L).val (2 * t1.val + 1) (2 * k.val)) 2 1 := by
        rw [show pair1_next.sl.v1691 d L tab k r g1 g2 hR hin = addf (pair1_next.sl.v1445) (pair1_next.sl.v1690 d L tab k r g1 g2 hR hin) from rfl, a_v1445_A2]
        exact acc_step d L fl tab (wL L).val (2 * t1.val + 1) (2 * k.val) 0 _ hRA ⟨0, by decide⟩ ⟨2, by decide⟩ _ rfl _ hw_v1667 _ (k1_off66_form ..) _ _
      have a_v1727 : pair1_next.sl.v1727 d L tab k r g1 g2 hR hin = AccMath.accVec (rowF fl tab (wL L).val (2 * t1.val + 1) (2 * k.val)) (offF fl (wL L).val (2 * t1.val + 1) (2 * k.val)) 2 2 := by
        rw [show pair1_next.sl.v1727 d L tab k r g1 g2 hR hin = addf (pair1_next.sl.v1691 d L tab k r g1 g2 hR hin) (pair1_next.sl.v1726 d L tab k r g1 g2 hR hin) from rfl, a_v1691]
        exact acc_step d L fl tab (wL L).val (2 * t1.val + 1) (2 * k.val) 0 _ hRA ⟨1, by decide⟩ ⟨2, by decide⟩ _ rfl _ hw_v1703 _ (k1_off67_form ..) _ _
      have a_v1763 : pair1_next.sl.v1763 d L tab k r g1 g2 hR hin = AccMath.accVec (rowF fl tab (wL L).val (2 * t1.val + 1) (2 * k.val)) (offF fl (wL L).val (2 * t1.val + 1) (2 * k.val)) 2 3 := by
        rw [show pair1_next.sl.v1763 d L tab k r g1 g2 hR hin = addf (pair1_next.sl.v1727 d L tab k r g1 g2 hR hin) (pair1_next.sl.v1762 d L tab k r g1 g2 hR hin) from rfl, a_v1727]
        exact acc_step d L fl tab (wL L).val (2 * t1.val + 1) (2 * k.val) 0 _ hRA ⟨2, by decide⟩ ⟨2, by decide⟩ _ rfl _ hw_v1739 _ (k1_off68_form ..) _ _
      have a_v1799 : pair1_next.sl.v1799 d L tab k r g1 g2 hR hin = AccMath.accVec (rowF fl tab (wL L).val (2 * t1.val + 1) (2 * k.val)) (offF fl (wL L).val (2 * t1.val + 1) (2 * k.val)) 2 4 := by
        rw [show pair1_next.sl.v1799 d L tab k r g1 g2 hR hin = addf (pair1_next.sl.v1763 d L tab k r g1 g2 hR hin) (pair1_next.sl.v1798 d L tab k r g1 g2 hR hin) from rfl, a_v1763]
        exact acc_step d L fl tab (wL L).val (2 * t1.val + 1) (2 * k.val) 0 _ hRA ⟨3, by decide⟩ ⟨2, by decide⟩ _ rfl _ hw_v1775 _ (k1_off69_form ..) _ _
      have a_v1835 : pair1_next.sl.v1835 d L tab k r g1 g2 hR hin = AccMath.accVec (rowF fl tab (wL L).val (2 * t1.val + 1) (2 * k.val)) (offF fl (wL L).val (2 * t1.val + 1) (2 * k.val)) 2 5 := by
        rw [show pair1_next.sl.v1835 d L tab k r g1 g2 hR hin = addf (pair1_next.sl.v1799 d L tab k r g1 g2 hR hin) (pair1_next.sl.v1834 d L tab k r g1 g2 hR hin) from rfl, a_v1799]
        exact acc_step d L fl tab (wL L).val (2 * t1.val + 1) (2 * k.val) 0 _ hRA ⟨4, by decide⟩ ⟨2, by decide⟩ _ rfl _ hw_v1811 _ (k1_off70_form ..) _ _
      have a_v1871 : pair1_next.sl.v1871 d L tab k r g1 g2 hR hin = AccMath.accVec (rowF fl tab (wL L).val (2 * t1.val + 1) (2 * k.val)) (offF fl (wL L).val (2 * t1.val + 1) (2 * k.val)) 2 6 := by
        rw [show pair1_next.sl.v1871 d L tab k r g1 g2 hR hin = addf (pair1_next.sl.v1835 d L tab k r g1 g2 hR hin) (pair1_next.sl.v1870 d L tab k r g1 g2 hR hin) from rfl, a_v1835]
        exact acc_step d L fl tab (wL L).val (2 * t1.val + 1) (2 * k.val) 0 _ hRA ⟨5, by decide⟩ ⟨2, by decide⟩ _ rfl _ hw_v1847 _ (k1_off71_form ..) _ _
      have a_v1907 : pair1_next.sl.v1907 d L tab k r g1 g2 hR hin = AccMath.accVec (rowF fl tab (wL L).val (2 * t1.val + 1) (2 * k.val)) (offF fl (wL L).val (2 * t1.val + 1) (2 * k.val)) 2 7 := by
        rw [show pair1_next.sl.v1907 d L tab k r g1 g2 hR hin = addf (pair1_next.sl.v1871 d L tab k r g1 g2 hR hin) (pair1_next.sl.v1906 d L tab k r g1 g2 hR hin) from rfl, a_v1871]
        exact acc_step d L fl tab (wL L).val (2 * t1.val + 1) (2 * k.val) 0 _ hRA ⟨6, by decide⟩ ⟨2, by decide⟩ _ rfl _ hw_v1883 _ (k1_off72_form ..) _ _
      have a_v1943 : pair1_next.sl.v1943 d L tab k r g1 g2 hR hin = AccMath.accVec (rowF fl tab (wL L).val (2 * t1.val + 1) (2 * k.val)) (offF fl (wL L).val (2 * t1.val + 1) (2 * k.val)) 2 8 := by
        rw [show pair1_next.sl.v1943 d L tab k r g1 g2 hR hin = addf (pair1_next.sl.v1907 d L tab k r g1 g2 hR hin) (pair1_next.sl.v1942 d L tab k r g1 g2 hR hin) from rfl, a_v1907]
        exact acc_step d L fl tab (wL L).val (2 * t1.val + 1) (2 * k.val) 0 _ hRA ⟨7, by decide⟩ ⟨2, by decide⟩ _ rfl _ hw_v1919 _ (k1_off73_form ..) _ _
      have a_v1979 : pair1_next.sl.v1979 d L tab k r g1 g2 hR hin = AccMath.accVec (rowF fl tab (wL L).val (2 * t1.val + 1) (2 * k.val)) (offF fl (wL L).val (2 * t1.val + 1) (2 * k.val)) 2 9 := by
        rw [show pair1_next.sl.v1979 d L tab k r g1 g2 hR hin = addf (pair1_next.sl.v1943 d L tab k r g1 g2 hR hin) (pair1_next.sl.v1978 d L tab k r g1 g2 hR hin) from rfl, a_v1943]
        exact acc_step d L fl tab (wL L).val (2 * t1.val + 1) (2 * k.val) 0 _ hRA ⟨8, by decide⟩ ⟨2, by decide⟩ _ rfl _ hw_v1955 _ (k1_off74_form ..) _ _
      have a_v2015 : pair1_next.sl.v2015 d L tab k r g1 g2 hR hin = AccMath.accVec (rowF fl tab (wL L).val (2 * t1.val + 1) (2 * k.val)) (offF fl (wL L).val (2 * t1.val + 1) (2 * k.val)) 2 10 := by
        rw [show pair1_next.sl.v2015 d L tab k r g1 g2 hR hin = addf (pair1_next.sl.v1979 d L tab k r g1 g2 hR hin) (pair1_next.sl.v2014 d L tab k r g1 g2 hR hin) from rfl, a_v1979]
        exact acc_step d L fl tab (wL L).val (2 * t1.val + 1) (2 * k.val) 0 _ hRA ⟨9, by decide⟩ ⟨2, by decide⟩ _ rfl _ hw_v1991 _ (k1_off75_form ..) _ _
      have a_v2051 : pair1_next.sl.v2051 d L tab k r g1 g2 hR hin = AccMath.accVec (rowF fl tab (wL L).val (2 * t1.val + 1) (2 * k.val)) (offF fl (wL L).val (2 * t1.val + 1) (2 * k.val)) 2 11 := by
        rw [show pair1_next.sl.v2051 d L tab k r g1 g2 hR hin = addf (pair1_next.sl.v2015 d L tab k r g1 g2 hR hin) (pair1_next.sl.v2050 d L tab k r g1 g2 hR hin) from rfl, a_v2015]
        exact acc_step d L fl tab (wL L).val (2 * t1.val + 1) (2 * k.val) 0 _ hRA ⟨10, by decide⟩ ⟨2, by decide⟩ _ rfl _ hw_v2027 _ (k1_off76_form ..) _ _
      have a_v2087 : pair1_next.sl.v2087 d L tab k r g1 g2 hR hin = AccMath.accVec (rowF fl tab (wL L).val (2 * t1.val + 1) (2 * k.val)) (offF fl (wL L).val (2 * t1.val + 1) (2 * k.val)) 2 12 := by
        rw [show pair1_next.sl.v2087 d L tab k r g1 g2 hR hin = addf (pair1_next.sl.v2051 d L tab k r g1 g2 hR hin) (pair1_next.sl.v2086 d L tab k r g1 g2 hR hin) from rfl, a_v2051]
        exact acc_step d L fl tab (wL L).val (2 * t1.val + 1) (2 * k.val) 0 _ hRA ⟨11, by decide⟩ ⟨2, by decide⟩ _ rfl _ hw_v2063 _ (k1_off77_form ..) _ _
      have a_v2123 : pair1_next.sl.v2123 d L tab k r g1 g2 hR hin = AccMath.accVec (rowF fl tab (wL L).val (2 * t1.val + 1) (2 * k.val)) (offF fl (wL L).val (2 * t1.val + 1) (2 * k.val)) 2 13 := by
        rw [show pair1_next.sl.v2123 d L tab k r g1 g2 hR hin = addf (pair1_next.sl.v2087 d L tab k r g1 g2 hR hin) (pair1_next.sl.v2122 d L tab k r g1 g2 hR hin) from rfl, a_v2087]
        exact acc_step d L fl tab (wL L).val (2 * t1.val + 1) (2 * k.val) 0 _ hRA ⟨12, by decide⟩ ⟨2, by decide⟩ _ rfl _ hw_v2099 _ (k1_off78_form ..) _ _
      have a_v2159 : pair1_next.sl.v2159 d L tab k r g1 g2 hR hin = AccMath.accVec (rowF fl tab (wL L).val (2 * t1.val + 1) (2 * k.val)) (offF fl (wL L).val (2 * t1.val + 1) (2 * k.val)) 2 14 := by
        rw [show pair1_next.sl.v2159 d L tab k r g1 g2 hR hin = addf (pair1_next.sl.v2123 d L tab k r g1 g2 hR hin) (pair1_next.sl.v2158 d L tab k r g1 g2 hR hin) from rfl, a_v2123]
        exact acc_step d L fl tab (wL L).val (2 * t1.val + 1) (2 * k.val) 0 _ hRA ⟨13, by decide⟩ ⟨2, by decide⟩ _ rfl _ hw_v2135 _ (k1_off79_form ..) _ _
      have a_v2195 : pair1_next.sl.v2195 d L tab k r g1 g2 hR hin = AccMath.accVec (rowF fl tab (wL L).val (2 * t1.val + 1) (2 * k.val)) (offF fl (wL L).val (2 * t1.val + 1) (2 * k.val)) 2 15 := by
        rw [show pair1_next.sl.v2195 d L tab k r g1 g2 hR hin = addf (pair1_next.sl.v2159 d L tab k r g1 g2 hR hin) (pair1_next.sl.v2194 d L tab k r g1 g2 hR hin) from rfl, a_v2159]
        exact acc_step d L fl tab (wL L).val (2 * t1.val + 1) (2 * k.val) 0 _ hRA ⟨14, by decide⟩ ⟨2, by decide⟩ _ rfl _ hw_v2171 _ (k1_off80_form ..) _ _
      have a_v2231 : pair1_next.sl.v2231 d L tab k r g1 g2 hR hin = AccMath.accVec (rowF fl tab (wL L).val (2 * t1.val + 1) (2 * k.val)) (offF fl (wL L).val (2 * t1.val + 1) (2 * k.val)) 2 16 := by
        rw [show pair1_next.sl.v2231 d L tab k r g1 g2 hR hin = addf (pair1_next.sl.v2195 d L tab k r g1 g2 hR hin) (pair1_next.sl.v2230 d L tab k r g1 g2 hR hin) from rfl, a_v2195]
        exact acc_step d L fl tab (wL L).val (2 * t1.val + 1) (2 * k.val) 0 _ hRA ⟨15, by decide⟩ ⟨2, by decide⟩ _ rfl _ hw_v2207 _ (k1_off81_form ..) _ _
      have a_v1691_1 : pair1_next.sl.v1691_1 d L tab k r g1 g2 hR hin = AccMath.accVec (rowF fl tab (wL L).val (2 * t1.val + 1) (2 * k.val)) (offF fl (wL L).val (2 * t1.val + 1) (2 * k.val)) 2 17 := by
        rw [show pair1_next.sl.v1691_1 d L tab k r g1 g2 hR hin = addf (pair1_next.sl.v2231 d L tab k r g1 g2 hR hin) (pair1_next.sl.v1690_1 d L tab k r g1 g2 hR hin) from rfl, a_v2231]
        exact acc_step d L fl tab (wL L).val (2 * t1.val + 1) (2 * k.val) 0 _ hRA ⟨16, by decide⟩ ⟨2, by decide⟩ _ rfl _ hw_v1667_1 _ (k1_off66_form ..) _ _
      have a_v1727_1 : pair1_next.sl.v1727_1 d L tab k r g1 g2 hR hin = AccMath.accVec (rowF fl tab (wL L).val (2 * t1.val + 1) (2 * k.val)) (offF fl (wL L).val (2 * t1.val + 1) (2 * k.val)) 2 18 := by
        rw [show pair1_next.sl.v1727_1 d L tab k r g1 g2 hR hin = addf (pair1_next.sl.v1691_1 d L tab k r g1 g2 hR hin) (pair1_next.sl.v1726_1 d L tab k r g1 g2 hR hin) from rfl, a_v1691_1]
        exact acc_step d L fl tab (wL L).val (2 * t1.val + 1) (2 * k.val) 0 _ hRA ⟨17, by decide⟩ ⟨2, by decide⟩ _ rfl _ hw_v1703_1 _ (k1_off67_form ..) _ _
      have a_v1763_1 : pair1_next.sl.v1763_1 d L tab k r g1 g2 hR hin = AccMath.accVec (rowF fl tab (wL L).val (2 * t1.val + 1) (2 * k.val)) (offF fl (wL L).val (2 * t1.val + 1) (2 * k.val)) 2 19 := by
        rw [show pair1_next.sl.v1763_1 d L tab k r g1 g2 hR hin = addf (pair1_next.sl.v1727_1 d L tab k r g1 g2 hR hin) (pair1_next.sl.v1762_1 d L tab k r g1 g2 hR hin) from rfl, a_v1727_1]
        exact acc_step d L fl tab (wL L).val (2 * t1.val + 1) (2 * k.val) 0 _ hRA ⟨18, by decide⟩ ⟨2, by decide⟩ _ rfl _ hw_v1739_1 _ (k1_off68_form ..) _ _
      have a_v1799_1 : pair1_next.sl.v1799_1 d L tab k r g1 g2 hR hin = AccMath.accVec (rowF fl tab (wL L).val (2 * t1.val + 1) (2 * k.val)) (offF fl (wL L).val (2 * t1.val + 1) (2 * k.val)) 2 20 := by
        rw [show pair1_next.sl.v1799_1 d L tab k r g1 g2 hR hin = addf (pair1_next.sl.v1763_1 d L tab k r g1 g2 hR hin) (pair1_next.sl.v1798_1 d L tab k r g1 g2 hR hin) from rfl, a_v1763_1]
        exact acc_step d L fl tab (wL L).val (2 * t1.val + 1) (2 * k.val) 0 _ hRA ⟨19, by decide⟩ ⟨2, by decide⟩ _ rfl _ hw_v1775_1 _ (k1_off69_form ..) _ _
      have a_v1835_1 : pair1_next.sl.v1835_1 d L tab k r g1 g2 hR hin = AccMath.accVec (rowF fl tab (wL L).val (2 * t1.val + 1) (2 * k.val)) (offF fl (wL L).val (2 * t1.val + 1) (2 * k.val)) 2 21 := by
        rw [show pair1_next.sl.v1835_1 d L tab k r g1 g2 hR hin = addf (pair1_next.sl.v1799_1 d L tab k r g1 g2 hR hin) (pair1_next.sl.v1834_1 d L tab k r g1 g2 hR hin) from rfl, a_v1799_1]
        exact acc_step d L fl tab (wL L).val (2 * t1.val + 1) (2 * k.val) 0 _ hRA ⟨20, by decide⟩ ⟨2, by decide⟩ _ rfl _ hw_v1811_1 _ (k1_off70_form ..) _ _
      have a_v1871_1 : pair1_next.sl.v1871_1 d L tab k r g1 g2 hR hin = AccMath.accVec (rowF fl tab (wL L).val (2 * t1.val + 1) (2 * k.val)) (offF fl (wL L).val (2 * t1.val + 1) (2 * k.val)) 2 22 := by
        rw [show pair1_next.sl.v1871_1 d L tab k r g1 g2 hR hin = addf (pair1_next.sl.v1835_1 d L tab k r g1 g2 hR hin) (pair1_next.sl.v1870_1 d L tab k r g1 g2 hR hin) from rfl, a_v1835_1]
        exact acc_step d L fl tab (wL L).val (2 * t1.val + 1) (2 * k.val) 0 _ hRA ⟨21, by decide⟩ ⟨2, by decide⟩ _ rfl _ hw_v1847_1 _ (k1_off71_form ..) _ _
      have a_v1907_1 : pair1_next.sl.v1907_1 d L tab k r g1 g2 hR hin = AccMath.accVec (rowF fl tab (wL L).val (2 * t1.val + 1) (2 * k.val)) (offF fl (wL L).val (2 * t1.val + 1) (2 * k.val)) 2 23 := by
        rw [show pair1_next.sl.v1907_1 d L tab k r g1 g2 hR hin = addf (pair1_next.sl.v1871_1 d L tab k r g1 g2 hR hin) (pair1_next.sl.v1906_1 d L tab k r g1 g2 hR hin) from rfl, a_v1871_1]
        exact acc_step d L fl tab (wL L).val (2 * t1.val + 1) (2 * k.val) 0 _ hRA ⟨22, by decide⟩ ⟨2, by decide⟩ _ rfl _ hw_v1883_1 _ (k1_off72_form ..) _ _
      have a_v1943_1 : pair1_next.sl.v1943_1 d L tab k r g1 g2 hR hin = AccMath.accVec (rowF fl tab (wL L).val (2 * t1.val + 1) (2 * k.val)) (offF fl (wL L).val (2 * t1.val + 1) (2 * k.val)) 2 24 := by
        rw [show pair1_next.sl.v1943_1 d L tab k r g1 g2 hR hin = addf (pair1_next.sl.v1907_1 d L tab k r g1 g2 hR hin) (pair1_next.sl.v1942_1 d L tab k r g1 g2 hR hin) from rfl, a_v1907_1]
        exact acc_step d L fl tab (wL L).val (2 * t1.val + 1) (2 * k.val) 0 _ hRA ⟨23, by decide⟩ ⟨2, by decide⟩ _ rfl _ hw_v1919_1 _ (k1_off73_form ..) _ _
      have a_v1979_1 : pair1_next.sl.v1979_1 d L tab k r g1 g2 hR hin = AccMath.accVec (rowF fl tab (wL L).val (2 * t1.val + 1) (2 * k.val)) (offF fl (wL L).val (2 * t1.val + 1) (2 * k.val)) 2 25 := by
        rw [show pair1_next.sl.v1979_1 d L tab k r g1 g2 hR hin = addf (pair1_next.sl.v1943_1 d L tab k r g1 g2 hR hin) (pair1_next.sl.v1978_1 d L tab k r g1 g2 hR hin) from rfl, a_v1943_1]
        exact acc_step d L fl tab (wL L).val (2 * t1.val + 1) (2 * k.val) 0 _ hRA ⟨24, by decide⟩ ⟨2, by decide⟩ _ rfl _ hw_v1955_1 _ (k1_off74_form ..) _ _
      have a_v2015_1 : pair1_next.sl.v2015_1 d L tab k r g1 g2 hR hin = AccMath.accVec (rowF fl tab (wL L).val (2 * t1.val + 1) (2 * k.val)) (offF fl (wL L).val (2 * t1.val + 1) (2 * k.val)) 2 26 := by
        rw [show pair1_next.sl.v2015_1 d L tab k r g1 g2 hR hin = addf (pair1_next.sl.v1979_1 d L tab k r g1 g2 hR hin) (pair1_next.sl.v2014_1 d L tab k r g1 g2 hR hin) from rfl, a_v1979_1]
        exact acc_step d L fl tab (wL L).val (2 * t1.val + 1) (2 * k.val) 0 _ hRA ⟨25, by decide⟩ ⟨2, by decide⟩ _ rfl _ hw_v1991_1 _ (k1_off75_form ..) _ _
      have a_v2051_1 : pair1_next.sl.v2051_1 d L tab k r g1 g2 hR hin = AccMath.accVec (rowF fl tab (wL L).val (2 * t1.val + 1) (2 * k.val)) (offF fl (wL L).val (2 * t1.val + 1) (2 * k.val)) 2 27 := by
        rw [show pair1_next.sl.v2051_1 d L tab k r g1 g2 hR hin = addf (pair1_next.sl.v2015_1 d L tab k r g1 g2 hR hin) (pair1_next.sl.v2050_1 d L tab k r g1 g2 hR hin) from rfl, a_v2015_1]
        exact acc_step d L fl tab (wL L).val (2 * t1.val + 1) (2 * k.val) 0 _ hRA ⟨26, by decide⟩ ⟨2, by decide⟩ _ rfl _ hw_v2027_1 _ (k1_off76_form ..) _ _
      have a_v2087_1 : pair1_next.sl.v2087_1 d L tab k r g1 g2 hR hin = AccMath.accVec (rowF fl tab (wL L).val (2 * t1.val + 1) (2 * k.val)) (offF fl (wL L).val (2 * t1.val + 1) (2 * k.val)) 2 28 := by
        rw [show pair1_next.sl.v2087_1 d L tab k r g1 g2 hR hin = addf (pair1_next.sl.v2051_1 d L tab k r g1 g2 hR hin) (pair1_next.sl.v2086_1 d L tab k r g1 g2 hR hin) from rfl, a_v2051_1]
        exact acc_step d L fl tab (wL L).val (2 * t1.val + 1) (2 * k.val) 0 _ hRA ⟨27, by decide⟩ ⟨2, by decide⟩ _ rfl _ hw_v2063_1 _ (k1_off77_form ..) _ _
      have a_v2123_1 : pair1_next.sl.v2123_1 d L tab k r g1 g2 hR hin = AccMath.accVec (rowF fl tab (wL L).val (2 * t1.val + 1) (2 * k.val)) (offF fl (wL L).val (2 * t1.val + 1) (2 * k.val)) 2 29 := by
        rw [show pair1_next.sl.v2123_1 d L tab k r g1 g2 hR hin = addf (pair1_next.sl.v2087_1 d L tab k r g1 g2 hR hin) (pair1_next.sl.v2122_1 d L tab k r g1 g2 hR hin) from rfl, a_v2087_1]
        exact acc_step d L fl tab (wL L).val (2 * t1.val + 1) (2 * k.val) 0 _ hRA ⟨28, by decide⟩ ⟨2, by decide⟩ _ rfl _ hw_v2099_1 _ (k1_off78_form ..) _ _
      have a_v2159_1 : pair1_next.sl.v2159_1 d L tab k r g1 g2 hR hin = AccMath.accVec (rowF fl tab (wL L).val (2 * t1.val + 1) (2 * k.val)) (offF fl (wL L).val (2 * t1.val + 1) (2 * k.val)) 2 30 := by
        rw [show pair1_next.sl.v2159_1 d L tab k r g1 g2 hR hin = addf (pair1_next.sl.v2123_1 d L tab k r g1 g2 hR hin) (pair1_next.sl.v2158_1 d L tab k r g1 g2 hR hin) from rfl, a_v2123_1]
        exact acc_step d L fl tab (wL L).val (2 * t1.val + 1) (2 * k.val) 0 _ hRA ⟨29, by decide⟩ ⟨2, by decide⟩ _ rfl _ hw_v2135_1 _ (k1_off79_form ..) _ _
      have a_v2195_1 : pair1_next.sl.v2195_1 d L tab k r g1 g2 hR hin = AccMath.accVec (rowF fl tab (wL L).val (2 * t1.val + 1) (2 * k.val)) (offF fl (wL L).val (2 * t1.val + 1) (2 * k.val)) 2 31 := by
        rw [show pair1_next.sl.v2195_1 d L tab k r g1 g2 hR hin = addf (pair1_next.sl.v2159_1 d L tab k r g1 g2 hR hin) (pair1_next.sl.v2194_1 d L tab k r g1 g2 hR hin) from rfl, a_v2159_1]
        exact acc_step d L fl tab (wL L).val (2 * t1.val + 1) (2 * k.val) 0 _ hRA ⟨30, by decide⟩ ⟨2, by decide⟩ _ rfl _ hw_v2171_1 _ (k1_off80_form ..) _ _
      have a_v2231_1 : pair1_next.sl.v2231_1 d L tab k r g1 g2 hR hin = AccMath.accVec (rowF fl tab (wL L).val (2 * t1.val + 1) (2 * k.val)) (offF fl (wL L).val (2 * t1.val + 1) (2 * k.val)) 2 32 := by
        rw [show pair1_next.sl.v2231_1 d L tab k r g1 g2 hR hin = addf (pair1_next.sl.v2195_1 d L tab k r g1 g2 hR hin) (pair1_next.sl.v2230_1 d L tab k r g1 g2 hR hin) from rfl, a_v2195_1]
        exact acc_step d L fl tab (wL L).val (2 * t1.val + 1) (2 * k.val) 0 _ hRA ⟨31, by decide⟩ ⟨2, by decide⟩ _ rfl _ hw_v2207_1 _ (k1_off81_form ..) _ _
      have a_v1691_2 : pair1_next.sl.v1691_2 d L tab k r g1 g2 hR hin = AccMath.accVec (rowF fl tab (wL L).val (2 * t1.val + 1) (2 * k.val)) (offF fl (wL L).val (2 * t1.val + 1) (2 * k.val)) 2 33 := by
        rw [show pair1_next.sl.v1691_2 d L tab k r g1 g2 hR hin = addf (pair1_next.sl.v2231_1 d L tab k r g1 g2 hR hin) (pair1_next.sl.v1690_2 d L tab k r g1 g2 hR hin) from rfl, a_v2231_1]
        exact acc_step d L fl tab (wL L).val (2 * t1.val + 1) (2 * k.val) 0 _ hRA ⟨32, by decide⟩ ⟨2, by decide⟩ _ rfl _ hw_v1667_2 _ (k1_off66_form ..) _ _
      have a_v1727_2 : pair1_next.sl.v1727_2 d L tab k r g1 g2 hR hin = AccMath.accVec (rowF fl tab (wL L).val (2 * t1.val + 1) (2 * k.val)) (offF fl (wL L).val (2 * t1.val + 1) (2 * k.val)) 2 34 := by
        rw [show pair1_next.sl.v1727_2 d L tab k r g1 g2 hR hin = addf (pair1_next.sl.v1691_2 d L tab k r g1 g2 hR hin) (pair1_next.sl.v1726_2 d L tab k r g1 g2 hR hin) from rfl, a_v1691_2]
        exact acc_step d L fl tab (wL L).val (2 * t1.val + 1) (2 * k.val) 0 _ hRA ⟨33, by decide⟩ ⟨2, by decide⟩ _ rfl _ hw_v1703_2 _ (k1_off67_form ..) _ _
      have a_v1763_2 : pair1_next.sl.v1763_2 d L tab k r g1 g2 hR hin = AccMath.accVec (rowF fl tab (wL L).val (2 * t1.val + 1) (2 * k.val)) (offF fl (wL L).val (2 * t1.val + 1) (2 * k.val)) 2 35 := by
        rw [show pair1_next.sl.v1763_2 d L tab k r g1 g2 hR hin = addf (pair1_next.sl.v1727_2 d L tab k r g1 g2 hR hin) (pair1_next.sl.v1762_2 d L tab k r g1 g2 hR hin) from rfl, a_v1727_2]
        exact acc_step d L fl tab (wL L).val (2 * t1.val + 1) (2 * k.val) 0 _ hRA ⟨34, by decide⟩ ⟨2, by decide⟩ _ rfl _ hw_v1739_2 _ (k1_off68_form ..) _ _
      have a_v1799_2 : pair1_next.sl.v1799_2 d L tab k r g1 g2 hR hin = AccMath.accVec (rowF fl tab (wL L).val (2 * t1.val + 1) (2 * k.val)) (offF fl (wL L).val (2 * t1.val + 1) (2 * k.val)) 2 36 := by
        rw [show pair1_next.sl.v1799_2 d L tab k r g1 g2 hR hin = addf (pair1_next.sl.v1763_2 d L tab k r g1 g2 hR hin) (pair1_next.sl.v1798_2 d L tab k r g1 g2 hR hin) from rfl, a_v1763_2]
        exact acc_step d L fl tab (wL L).val (2 * t1.val + 1) (2 * k.val) 0 _ hRA ⟨35, by decide⟩ ⟨2, by decide⟩ _ rfl _ hw_v1775_2 _ (k1_off69_form ..) _ _
      have a_v1835_2 : pair1_next.sl.v1835_2 d L tab k r g1 g2 hR hin = AccMath.accVec (rowF fl tab (wL L).val (2 * t1.val + 1) (2 * k.val)) (offF fl (wL L).val (2 * t1.val + 1) (2 * k.val)) 2 37 := by
        rw [show pair1_next.sl.v1835_2 d L tab k r g1 g2 hR hin = addf (pair1_next.sl.v1799_2 d L tab k r g1 g2 hR hin) (pair1_next.sl.v1834_2 d L tab k r g1 g2 hR hin) from rfl, a_v1799_2]
        exact acc_step d L fl tab (wL L).val (2 * t1.val + 1) (2 * k.val) 0 _ hRA ⟨36, by decide⟩ ⟨2, by decide⟩ _ rfl _ hw_v1811_2 _ (k1_off70_form ..) _ _
      have a_v1871_2 : pair1_next.sl.v1871_2 d L tab k r g1 g2 hR hin = AccMath.accVec (rowF fl tab (wL L).val (2 * t1.val + 1) (2 * k.val)) (offF fl (wL L).val (2 * t1.val + 1) (2 * k.val)) 2 38 := by
        rw [show pair1_next.sl.v1871_2 d L tab k r g1 g2 hR hin = addf (pair1_next.sl.v1835_2 d L tab k r g1 g2 hR hin) (pair1_next.sl.v1870_2 d L tab k r g1 g2 hR hin) from rfl, a_v1835_2]
        exact acc_step d L fl tab (wL L).val (2 * t1.val + 1) (2 * k.val) 0 _ hRA ⟨37, by decide⟩ ⟨2, by decide⟩ _ rfl _ hw_v1847_2 _ (k1_off71_form ..) _ _
      have a_v1907_2 : pair1_next.sl.v1907_2 d L tab k r g1 g2 hR hin = AccMath.accVec (rowF fl tab (wL L).val (2 * t1.val + 1) (2 * k.val)) (offF fl (wL L).val (2 * t1.val + 1) (2 * k.val)) 2 39 := by
        rw [show pair1_next.sl.v1907_2 d L tab k r g1 g2 hR hin = addf (pair1_next.sl.v1871_2 d L tab k r g1 g2 hR hin) (pair1_next.sl.v1906_2 d L tab k r g1 g2 hR hin) from rfl, a_v1871_2]
        exact acc_step d L fl tab (wL L).val (2 * t1.val + 1) (2 * k.val) 0 _ hRA ⟨38, by decide⟩ ⟨2, by decide⟩ _ rfl _ hw_v1883_2 _ (k1_off72_form ..) _ _
      have a_v1943_2 : pair1_next.sl.v1943_2 d L tab k r g1 g2 hR hin = AccMath.accVec (rowF fl tab (wL L).val (2 * t1.val + 1) (2 * k.val)) (offF fl (wL L).val (2 * t1.val + 1) (2 * k.val)) 2 40 := by
        rw [show pair1_next.sl.v1943_2 d L tab k r g1 g2 hR hin = addf (pair1_next.sl.v1907_2 d L tab k r g1 g2 hR hin) (pair1_next.sl.v1942_2 d L tab k r g1 g2 hR hin) from rfl, a_v1907_2]
        exact acc_step d L fl tab (wL L).val (2 * t1.val + 1) (2 * k.val) 0 _ hRA ⟨39, by decide⟩ ⟨2, by decide⟩ _ rfl _ hw_v1919_2 _ (k1_off73_form ..) _ _
      have a_v1979_2 : pair1_next.sl.v1979_2 d L tab k r g1 g2 hR hin = AccMath.accVec (rowF fl tab (wL L).val (2 * t1.val + 1) (2 * k.val)) (offF fl (wL L).val (2 * t1.val + 1) (2 * k.val)) 2 41 := by
        rw [show pair1_next.sl.v1979_2 d L tab k r g1 g2 hR hin = addf (pair1_next.sl.v1943_2 d L tab k r g1 g2 hR hin) (pair1_next.sl.v1978_2 d L tab k r g1 g2 hR hin) from rfl, a_v1943_2]
        exact acc_step d L fl tab (wL L).val (2 * t1.val + 1) (2 * k.val) 0 _ hRA ⟨40, by decide⟩ ⟨2, by decide⟩ _ rfl _ hw_v1955_2 _ (k1_off74_form ..) _ _
      have a_v2015_2 : pair1_next.sl.v2015_2 d L tab k r g1 g2 hR hin = AccMath.accVec (rowF fl tab (wL L).val (2 * t1.val + 1) (2 * k.val)) (offF fl (wL L).val (2 * t1.val + 1) (2 * k.val)) 2 42 := by
        rw [show pair1_next.sl.v2015_2 d L tab k r g1 g2 hR hin = addf (pair1_next.sl.v1979_2 d L tab k r g1 g2 hR hin) (pair1_next.sl.v2014_2 d L tab k r g1 g2 hR hin) from rfl, a_v1979_2]
        exact acc_step d L fl tab (wL L).val (2 * t1.val + 1) (2 * k.val) 0 _ hRA ⟨41, by decide⟩ ⟨2, by decide⟩ _ rfl _ hw_v1991_2 _ (k1_off75_form ..) _ _
      have a_v2051_2 : pair1_next.sl.v2051_2 d L tab k r g1 g2 hR hin = AccMath.accVec (rowF fl tab (wL L).val (2 * t1.val + 1) (2 * k.val)) (offF fl (wL L).val (2 * t1.val + 1) (2 * k.val)) 2 43 := by
        rw [show pair1_next.sl.v2051_2 d L tab k r g1 g2 hR hin = addf (pair1_next.sl.v2015_2 d L tab k r g1 g2 hR hin) (pair1_next.sl.v2050_2 d L tab k r g1 g2 hR hin) from rfl, a_v2015_2]
        exact acc_step d L fl tab (wL L).val (2 * t1.val + 1) (2 * k.val) 0 _ hRA ⟨42, by decide⟩ ⟨2, by decide⟩ _ rfl _ hw_v2027_2 _ (k1_off76_form ..) _ _
      have a_v2087_2 : pair1_next.sl.v2087_2 d L tab k r g1 g2 hR hin = AccMath.accVec (rowF fl tab (wL L).val (2 * t1.val + 1) (2 * k.val)) (offF fl (wL L).val (2 * t1.val + 1) (2 * k.val)) 2 44 := by
        rw [show pair1_next.sl.v2087_2 d L tab k r g1 g2 hR hin = addf (pair1_next.sl.v2051_2 d L tab k r g1 g2 hR hin) (pair1_next.sl.v2086_2 d L tab k r g1 g2 hR hin) from rfl, a_v2051_2]
        exact acc_step d L fl tab (wL L).val (2 * t1.val + 1) (2 * k.val) 0 _ hRA ⟨43, by decide⟩ ⟨2, by decide⟩ _ rfl _ hw_v2063_2 _ (k1_off77_form ..) _ _
      have a_v2123_2 : pair1_next.sl.v2123_2 d L tab k r g1 g2 hR hin = AccMath.accVec (rowF fl tab (wL L).val (2 * t1.val + 1) (2 * k.val)) (offF fl (wL L).val (2 * t1.val + 1) (2 * k.val)) 2 45 := by
        rw [show pair1_next.sl.v2123_2 d L tab k r g1 g2 hR hin = addf (pair1_next.sl.v2087_2 d L tab k r g1 g2 hR hin) (pair1_next.sl.v2122_2 d L tab k r g1 g2 hR hin) from rfl, a_v2087_2]
        exact acc_step d L fl tab (wL L).val (2 * t1.val + 1) (2 * k.val) 0 _ hRA ⟨44, by decide⟩ ⟨2, by decide⟩ _ rfl _ hw_v2099_2 _ (k1_off78_form ..) _ _
      have a_v2159_2 : pair1_next.sl.v2159_2 d L tab k r g1 g2 hR hin = AccMath.accVec (rowF fl tab (wL L).val (2 * t1.val + 1) (2 * k.val)) (offF fl (wL L).val (2 * t1.val + 1) (2 * k.val)) 2 46 := by
        rw [show pair1_next.sl.v2159_2 d L tab k r g1 g2 hR hin = addf (pair1_next.sl.v2123_2 d L tab k r g1 g2 hR hin) (pair1_next.sl.v2158_2 d L tab k r g1 g2 hR hin) from rfl, a_v2123_2]
        exact acc_step d L fl tab (wL L).val (2 * t1.val + 1) (2 * k.val) 0 _ hRA ⟨45, by decide⟩ ⟨2, by decide⟩ _ rfl _ hw_v2135_2 _ (k1_off79_form ..) _ _
      have a_v2195_2 : pair1_next.sl.v2195_2 d L tab k r g1 g2 hR hin = AccMath.accVec (rowF fl tab (wL L).val (2 * t1.val + 1) (2 * k.val)) (offF fl (wL L).val (2 * t1.val + 1) (2 * k.val)) 2 47 := by
        rw [show pair1_next.sl.v2195_2 d L tab k r g1 g2 hR hin = addf (pair1_next.sl.v2159_2 d L tab k r g1 g2 hR hin) (pair1_next.sl.v2194_2 d L tab k r g1 g2 hR hin) from rfl, a_v2159_2]
        exact acc_step d L fl tab (wL L).val (2 * t1.val + 1) (2 * k.val) 0 _ hRA ⟨46, by decide⟩ ⟨2, by decide⟩ _ rfl _ hw_v2171_2 _ (k1_off80_form ..) _ _
      have a_v2231_2 : pair1_next.sl.v2231_2 d L tab k r g1 g2 hR hin = AccMath.accVec (rowF fl tab (wL L).val (2 * t1.val + 1) (2 * k.val)) (offF fl (wL L).val (2 * t1.val + 1) (2 * k.val)) 2 48 := by
        rw [show pair1_next.sl.v2231_2 d L tab k r g1 g2 hR hin = addf (pair1_next.sl.v2195_2 d L tab k r g1 g2 hR hin) (pair1_next.sl.v2230_2 d L tab k r g1 g2 hR hin) from rfl, a_v2195_2]
        exact acc_step d L fl tab (wL L).val (2 * t1.val + 1) (2 * k.val) 0 _ hRA ⟨47, by decide⟩ ⟨2, by decide⟩ _ rfl _ hw_v2207_2 _ (k1_off81_form ..) _ _
      have a_v1480 : pair1_next.sl.v1480 d L tab k r g1 g2 hR hin = AccMath.accVec (rowF fl tab (wL L).val (2 * t1.val + 1) (2 * k.val)) (offF fl (wL L).val (2 * t1.val + 1) (2 * k.val)) 2 49 := by
        rw [show pair1_next.sl.v1480 d L tab k r g1 g2 hR hin = addf (pair1_next.sl.v2231_2 d L tab k r g1 g2 hR hin) (pair1_next.sl.v1479 d L tab k r g1 g2 hR hin) from rfl, a_v2231_2]
        exact acc_step d L fl tab (wL L).val (2 * t1.val + 1) (2 * k.val) 0 _ hRA ⟨48, by decide⟩ ⟨2, by decide⟩ _ rfl _ hw_v1456 _ (k1_off83_form ..) _ _
      have a_v1514 : pair1_next.sl.v1514 d L tab k r g1 g2 hR hin = AccMath.accVec (rowF fl tab (wL L).val (2 * t1.val + 1) (2 * k.val)) (offF fl (wL L).val (2 * t1.val + 1) (2 * k.val)) 2 50 := by
        rw [show pair1_next.sl.v1514 d L tab k r g1 g2 hR hin = addf (pair1_next.sl.v1480 d L tab k r g1 g2 hR hin) (pair1_next.sl.v1513 d L tab k r g1 g2 hR hin) from rfl, a_v1480]
        exact acc_step d L fl tab (wL L).val (2 * t1.val + 1) (2 * k.val) 0 _ hRA ⟨49, by decide⟩ ⟨2, by decide⟩ _ rfl _ hw_v1490 _ (k1_off84_form ..) _ _
      have a_v1445_A3 : pair1_next.sl.v1445 = AccMath.accVec (rowF fl tab (wL L).val (2 * t1.val + 1) (2 * k.val)) (offF fl (wL L).val (2 * t1.val + 1) (2 * k.val)) 3 0 := acc_zero fl tab (wL L).val (2 * t1.val + 1) (2 * k.val) 3
      have a_v1699 : pair1_next.sl.v1699 d L tab k r g1 g2 hR hin = AccMath.accVec (rowF fl tab (wL L).val (2 * t1.val + 1) (2 * k.val)) (offF fl (wL L).val (2 * t1.val + 1) (2 * k.val)) 3 1 := by
        rw [show pair1_next.sl.v1699 d L tab k r g1 g2 hR hin = addf (pair1_next.sl.v1445) (pair1_next.sl.v1698 d L tab k r g1 g2 hR hin) from rfl, a_v1445_A3]
        exact acc_step d L fl tab (wL L).val (2 * t1.val + 1) (2 * k.val) 0 _ hRA ⟨0, by decide⟩ ⟨3, by decide⟩ _ rfl _ hw_v1667 _ (k1_off66_form ..) _ _
      have a_v1735 : pair1_next.sl.v1735 d L tab k r g1 g2 hR hin = AccMath.accVec (rowF fl tab (wL L).val (2 * t1.val + 1) (2 * k.val)) (offF fl (wL L).val (2 * t1.val + 1) (2 * k.val)) 3 2 := by
        rw [show pair1_next.sl.v1735 d L tab k r g1 g2 hR hin = addf (pair1_next.sl.v1699 d L tab k r g1 g2 hR hin) (pair1_next.sl.v1734 d L tab k r g1 g2 hR hin) from rfl, a_v1699]
        exact acc_step d L fl tab (wL L).val (2 * t1.val + 1) (2 * k.val) 0 _ hRA ⟨1, by decide⟩ ⟨3, by decide⟩ _ rfl _ hw_v1703 _ (k1_off67_form ..) _ _
      have a_v1771 : pair1_next.sl.v1771 d L tab k r g1 g2 hR hin = AccMath.accVec (rowF fl tab (wL L).val (2 * t1.val + 1) (2 * k.val)) (offF fl (wL L).val (2 * t1.val + 1) (2 * k.val)) 3 3 := by
        rw [show pair1_next.sl.v1771 d L tab k r g1 g2 hR hin = addf (pair1_next.sl.v1735 d L tab k r g1 g2 hR hin) (pair1_next.sl.v1770 d L tab k r g1 g2 hR hin) from rfl, a_v1735]
        exact acc_step d L fl tab (wL L).val (2 * t1.val + 1) (2 * k.val) 0 _ hRA ⟨2, by decide⟩ ⟨3, by decide⟩ _ rfl _ hw_v1739 _ (k1_off68_form ..) _ _
      have a_v1807 : pair1_next.sl.v1807 d L tab k r g1 g2 hR hin = AccMath.accVec (rowF fl tab (wL L).val (2 * t1.val + 1) (2 * k.val)) (offF fl (wL L).val (2 * t1.val + 1) (2 * k.val)) 3 4 := by
        rw [show pair1_next.sl.v1807 d L tab k r g1 g2 hR hin = addf (pair1_next.sl.v1771 d L tab k r g1 g2 hR hin) (pair1_next.sl.v1806 d L tab k r g1 g2 hR hin) from rfl, a_v1771]
        exact acc_step d L fl tab (wL L).val (2 * t1.val + 1) (2 * k.val) 0 _ hRA ⟨3, by decide⟩ ⟨3, by decide⟩ _ rfl _ hw_v1775 _ (k1_off69_form ..) _ _
      have a_v1843 : pair1_next.sl.v1843 d L tab k r g1 g2 hR hin = AccMath.accVec (rowF fl tab (wL L).val (2 * t1.val + 1) (2 * k.val)) (offF fl (wL L).val (2 * t1.val + 1) (2 * k.val)) 3 5 := by
        rw [show pair1_next.sl.v1843 d L tab k r g1 g2 hR hin = addf (pair1_next.sl.v1807 d L tab k r g1 g2 hR hin) (pair1_next.sl.v1842 d L tab k r g1 g2 hR hin) from rfl, a_v1807]
        exact acc_step d L fl tab (wL L).val (2 * t1.val + 1) (2 * k.val) 0 _ hRA ⟨4, by decide⟩ ⟨3, by decide⟩ _ rfl _ hw_v1811 _ (k1_off70_form ..) _ _
      have a_v1879 : pair1_next.sl.v1879 d L tab k r g1 g2 hR hin = AccMath.accVec (rowF fl tab (wL L).val (2 * t1.val + 1) (2 * k.val)) (offF fl (wL L).val (2 * t1.val + 1) (2 * k.val)) 3 6 := by
        rw [show pair1_next.sl.v1879 d L tab k r g1 g2 hR hin = addf (pair1_next.sl.v1843 d L tab k r g1 g2 hR hin) (pair1_next.sl.v1878 d L tab k r g1 g2 hR hin) from rfl, a_v1843]
        exact acc_step d L fl tab (wL L).val (2 * t1.val + 1) (2 * k.val) 0 _ hRA ⟨5, by decide⟩ ⟨3, by decide⟩ _ rfl _ hw_v1847 _ (k1_off71_form ..) _ _
      have a_v1915 : pair1_next.sl.v1915 d L tab k r g1 g2 hR hin = AccMath.accVec (rowF fl tab (wL L).val (2 * t1.val + 1) (2 * k.val)) (offF fl (wL L).val (2 * t1.val + 1) (2 * k.val)) 3 7 := by
        rw [show pair1_next.sl.v1915 d L tab k r g1 g2 hR hin = addf (pair1_next.sl.v1879 d L tab k r g1 g2 hR hin) (pair1_next.sl.v1914 d L tab k r g1 g2 hR hin) from rfl, a_v1879]
        exact acc_step d L fl tab (wL L).val (2 * t1.val + 1) (2 * k.val) 0 _ hRA ⟨6, by decide⟩ ⟨3, by decide⟩ _ rfl _ hw_v1883 _ (k1_off72_form ..) _ _
      have a_v1951 : pair1_next.sl.v1951 d L tab k r g1 g2 hR hin = AccMath.accVec (rowF fl tab (wL L).val (2 * t1.val + 1) (2 * k.val)) (offF fl (wL L).val (2 * t1.val + 1) (2 * k.val)) 3 8 := by
        rw [show pair1_next.sl.v1951 d L tab k r g1 g2 hR hin = addf (pair1_next.sl.v1915 d L tab k r g1 g2 hR hin) (pair1_next.sl.v1950 d L tab k r g1 g2 hR hin) from rfl, a_v1915]
        exact acc_step d L fl tab (wL L).val (2 * t1.val + 1) (2 * k.val) 0 _ hRA ⟨7, by decide⟩ ⟨3, by decide⟩ _ rfl _ hw_v1919 _ (k1_off73_form ..) _ _
      have a_v1987 : pair1_next.sl.v1987 d L tab k r g1 g2 hR hin = AccMath.accVec (rowF fl tab (wL L).val (2 * t1.val + 1) (2 * k.val)) (offF fl (wL L).val (2 * t1.val + 1) (2 * k.val)) 3 9 := by
        rw [show pair1_next.sl.v1987 d L tab k r g1 g2 hR hin = addf (pair1_next.sl.v1951 d L tab k r g1 g2 hR hin) (pair1_next.sl.v1986 d L tab k r g1 g2 hR hin) from rfl, a_v1951]
        exact acc_step d L fl tab (wL L).val (2 * t1.val + 1) (2 * k.val) 0 _ hRA ⟨8, by decide⟩ ⟨3, by decide⟩ _ rfl _ hw_v1955 _ (k1_off74_form ..) _ _
      have a_v2023 : pair1_next.sl.v2023 d L tab k r g1 g2 hR hin = AccMath.accVec (rowF fl tab (wL L).val (2 * t1.val + 1) (2 * k.val)) (offF fl (wL L).val (2 * t1.val + 1) (2 * k.val)) 3 10 := by
        rw [show pair1_next.sl.v2023 d L tab k r g1 g2 hR hin = addf (pair1_next.sl.v1987 d L tab k r g1 g2 hR hin) (pair1_next.sl.v2022 d L tab k r g1 g2 hR hin) from rfl, a_v1987]
        exact acc_step d L fl tab (wL L).val (2 * t1.val + 1) (2 * k.val) 0 _ hRA ⟨9, by decide⟩ ⟨3, by decide⟩ _ rfl _ hw_v1991 _ (k1_off75_form ..) _ _
      have a_v2059 : pair1_next.sl.v2059 d L tab k r g1 g2 hR hin = AccMath.accVec (rowF fl tab (wL L).val (2 * t1.val + 1) (2 * k.val)) (offF fl (wL L).val (2 * t1.val + 1) (2 * k.val)) 3 11 := by
        rw [show pair1_next.sl.v2059 d L tab k r g1 g2 hR hin = addf (pair1_next.sl.v2023 d L tab k r g1 g2 hR hin) (pair1_next.sl.v2058 d L tab k r g1 g2 hR hin) from rfl, a_v2023]
        exact acc_step d L fl tab (wL L).val (2 * t1.val + 1) (2 * k.val) 0 _ hRA ⟨10, by decide⟩ ⟨3, by decide⟩ _ rfl _ hw_v2027 _ (k1_off76_form ..) _ _
      have a_v2095 : pair1_next.sl.v2095 d L tab k r g1 g2 hR hin = AccMath.accVec (rowF fl tab (wL L).val (2 * t1.val + 1) (2 * k.val)) (offF fl (wL L).val (2 * t1.val + 1) (2 * k.val)) 3 12 := by
        rw [show pair1_next.sl.v2095 d L tab k r g1 g2 hR hin = addf (pair1_next.sl.v2059 d L tab k r g1 g2 hR hin) (pair1_next.sl.v2094 d L tab k r g1 g2 hR hin) from rfl, a_v2059]
        exact acc_step d L fl tab (wL L).val (2 * t1.val + 1) (2 * k.val) 0 _ hRA ⟨11, by decide⟩ ⟨3, by decide⟩ _ rfl _ hw_v2063 _ (k1_off77_form ..) _ _
      have a_v2131 : pair1_next.sl.v2131 d L tab k r g1 g2 hR hin = AccMath.accVec (rowF fl tab (wL L).val (2 * t1.val + 1) (2 * k.val)) (offF fl (wL L).val (2 * t1.val + 1) (2 * k.val)) 3 13 := by
        rw [show pair1_next.sl.v2131 d L tab k r g1 g2 hR hin = addf (pair1_next.sl.v2095 d L tab k r g1 g2 hR hin) (pair1_next.sl.v2130 d L tab k r g1 g2 hR hin) from rfl, a_v2095]
        exact acc_step d L fl tab (wL L).val (2 * t1.val + 1) (2 * k.val) 0 _ hRA ⟨12, by decide⟩ ⟨3, by decide⟩ _ rfl _ hw_v2099 _ (k1_off78_form ..) _ _
      have a_v2167 : pair1_next.sl.v2167 d L tab k r g1 g2 hR hin = AccMath.accVec (rowF fl tab (wL L).val (2 * t1.val + 1) (2 * k.val)) (offF fl (wL L).val (2 * t1.val + 1) (2 * k.val)) 3 14 := by
        rw [show pair1_next.sl.v2167 d L tab k r g1 g2 hR hin = addf (pair1_next.sl.v2131 d L tab k r g1 g2 hR hin) (pair1_next.sl.v2166 d L tab k r g1 g2 hR hin) from rfl, a_v2131]
        exact acc_step d L fl tab (wL L).val (2 * t1.val + 1) (2 * k.val) 0 _ hRA ⟨13, by decide⟩ ⟨3, by decide⟩ _ rfl _ hw_v2135 _ (k1_off79_form ..) _ _
      have a_v2203 : pair1_next.sl.v2203 d L tab k r g1 g2 hR hin = AccMath.accVec (rowF fl tab (wL L).val (2 * t1.val + 1) (2 * k.val)) (offF fl (wL L).val (2 * t1.val + 1) (2 * k.val)) 3 15 := by
        rw [show pair1_next.sl.v2203 d L tab k r g1 g2 hR hin = addf (pair1_next.sl.v2167 d L tab k r g1 g2 hR hin) (pair1_next.sl.v2202 d L tab k r g1 g2 hR hin) from rfl, a_v2167]
        exact acc_step d L fl tab (wL L).val (2 * t1.val + 1) (2 * k.val) 0 _ hRA ⟨14, by decide⟩ ⟨3, by decide⟩ _ rfl _ hw_v2171 _ (k1_off80_form ..) _ _
      have a_v2239 : pair1_next.sl.v2239 d L tab k r g1 g2 hR hin = AccMath.accVec (rowF fl tab (wL L).val (2 * t1.val + 1) (2 * k.val)) (offF fl (wL L).val (2 * t1.val + 1) (2 * k.val)) 3 16 := by
        rw [show pair1_next.sl.v2239 d L tab k r g1 g2 hR hin = addf (pair1_next.sl.v2203 d L tab k r g1 g2 hR hin) (pair1_next.sl.v2238 d L tab k r g1 g2 hR hin) from rfl, a_v2203]
        exact acc_step d L fl tab (wL L).val (2 * t1.val + 1) (2 * k.val) 0 _ hRA ⟨15, by decide⟩ ⟨3, by decide⟩ _ rfl _ hw_v2207 _ (k1_off81_form ..) _ _
      have a_v1699_1 : pair1_next.sl.v1699_1 d L tab k r g1 g2 hR hin = AccMath.accVec (rowF fl tab (wL L).val (2 * t1.val + 1) (2 * k.val)) (offF fl (wL L).val (2 * t1.val + 1) (2 * k.val)) 3 17 := by
        rw [show pair1_next.sl.v1699_1 d L tab k r g1 g2 hR hin = addf (pair1_next.sl.v2239 d L tab k r g1 g2 hR hin) (pair1_next.sl.v1698_1 d L tab k r g1 g2 hR hin) from rfl, a_v2239]
        exact acc_step d L fl tab (wL L).val (2 * t1.val + 1) (2 * k.val) 0 _ hRA ⟨16, by decide⟩ ⟨3, by decide⟩ _ rfl _ hw_v1667_1 _ (k1_off66_form ..) _ _
      have a_v1735_1 : pair1_next.sl.v1735_1 d L tab k r g1 g2 hR hin = AccMath.accVec (rowF fl tab (wL L).val (2 * t1.val + 1) (2 * k.val)) (offF fl (wL L).val (2 * t1.val + 1) (2 * k.val)) 3 18 := by
        rw [show pair1_next.sl.v1735_1 d L tab k r g1 g2 hR hin = addf (pair1_next.sl.v1699_1 d L tab k r g1 g2 hR hin) (pair1_next.sl.v1734_1 d L tab k r g1 g2 hR hin) from rfl, a_v1699_1]
        exact acc_step d L fl tab (wL L).val (2 * t1.val + 1) (2 * k.val) 0 _ hRA ⟨17, by decide⟩ ⟨3, by decide⟩ _ rfl _ hw_v1703_1 _ (k1_off67_form ..) _ _
      have a_v1771_1 : pair1_next.sl.v1771_1 d L tab k r g1 g2 hR hin = AccMath.accVec (rowF fl tab (wL L).val (2 * t1.val + 1) (2 * k.val)) (offF fl (wL L).val (2 * t1.val + 1) (2 * k.val)) 3 19 := by
        rw [show pair1_next.sl.v1771_1 d L tab k r g1 g2 hR hin = addf (pair1_next.sl.v1735_1 d L tab k r g1 g2 hR hin) (pair1_next.sl.v1770_1 d L tab k r g1 g2 hR hin) from rfl, a_v1735_1]
        exact acc_step d L fl tab (wL L).val (2 * t1.val + 1) (2 * k.val) 0 _ hRA ⟨18, by decide⟩ ⟨3, by decide⟩ _ rfl _ hw_v1739_1 _ (k1_off68_form ..) _ _
      have a_v1807_1 : pair1_next.sl.v1807_1 d L tab k r g1 g2 hR hin = AccMath.accVec (rowF fl tab (wL L).val (2 * t1.val + 1) (2 * k.val)) (offF fl (wL L).val (2 * t1.val + 1) (2 * k.val)) 3 20 := by
        rw [show pair1_next.sl.v1807_1 d L tab k r g1 g2 hR hin = addf (pair1_next.sl.v1771_1 d L tab k r g1 g2 hR hin) (pair1_next.sl.v1806_1 d L tab k r g1 g2 hR hin) from rfl, a_v1771_1]
        exact acc_step d L fl tab (wL L).val (2 * t1.val + 1) (2 * k.val) 0 _ hRA ⟨19, by decide⟩ ⟨3, by decide⟩ _ rfl _ hw_v1775_1 _ (k1_off69_form ..) _ _
      have a_v1843_1 : pair1_next.sl.v1843_1 d L tab k r g1 g2 hR hin = AccMath.accVec (rowF fl tab (wL L).val (2 * t1.val + 1) (2 * k.val)) (offF fl (wL L).val (2 * t1.val + 1) (2 * k.val)) 3 21 := by
        rw [show pair1_next.sl.v1843_1 d L tab k r g1 g2 hR hin = addf (pair1_next.sl.v1807_1 d L tab k r g1 g2 hR hin) (pair1_next.sl.v1842_1 d L tab k r g1 g2 hR hin) from rfl, a_v1807_1]
        exact acc_step d L fl tab (wL L).val (2 * t1.val + 1) (2 * k.val) 0 _ hRA ⟨20, by decide⟩ ⟨3, by decide⟩ _ rfl _ hw_v1811_1 _ (k1_off70_form ..) _ _
      have a_v1879_1 : pair1_next.sl.v1879_1 d L tab k r g1 g2 hR hin = AccMath.accVec (rowF fl tab (wL L).val (2 * t1.val + 1) (2 * k.val)) (offF fl (wL L).val (2 * t1.val + 1) (2 * k.val)) 3 22 := by
        rw [show pair1_next.sl.v1879_1 d L tab k r g1 g2 hR hin = addf (pair1_next.sl.v1843_1 d L tab k r g1 g2 hR hin) (pair1_next.sl.v1878_1 d L tab k r g1 g2 hR hin) from rfl, a_v1843_1]
        exact acc_step d L fl tab (wL L).val (2 * t1.val + 1) (2 * k.val) 0 _ hRA ⟨21, by decide⟩ ⟨3, by decide⟩ _ rfl _ hw_v1847_1 _ (k1_off71_form ..) _ _
      have a_v1915_1 : pair1_next.sl.v1915_1 d L tab k r g1 g2 hR hin = AccMath.accVec (rowF fl tab (wL L).val (2 * t1.val + 1) (2 * k.val)) (offF fl (wL L).val (2 * t1.val + 1) (2 * k.val)) 3 23 := by
        rw [show pair1_next.sl.v1915_1 d L tab k r g1 g2 hR hin = addf (pair1_next.sl.v1879_1 d L tab k r g1 g2 hR hin) (pair1_next.sl.v1914_1 d L tab k r g1 g2 hR hin) from rfl, a_v1879_1]
        exact acc_step d L fl tab (wL L).val (2 * t1.val + 1) (2 * k.val) 0 _ hRA ⟨22, by decide⟩ ⟨3, by decide⟩ _ rfl _ hw_v1883_1 _ (k1_off72_form ..) _ _
      have a_v1951_1 : pair1_next.sl.v1951_1 d L tab k r g1 g2 hR hin = AccMath.accVec (rowF fl tab (wL L).val (2 * t1.val + 1) (2 * k.val)) (offF fl (wL L).val (2 * t1.val + 1) (2 * k.val)) 3 24 := by
        rw [show pair1_next.sl.v1951_1 d L tab k r g1 g2 hR hin = addf (pair1_next.sl.v1915_1 d L tab k r g1 g2 hR hin) (pair1_next.sl.v1950_1 d L tab k r g1 g2 hR hin) from rfl, a_v1915_1]
        exact acc_step d L fl tab (wL L).val (2 * t1.val + 1) (2 * k.val) 0 _ hRA ⟨23, by decide⟩ ⟨3, by decide⟩ _ rfl _ hw_v1919_1 _ (k1_off73_form ..) _ _
      have a_v1987_1 : pair1_next.sl.v1987_1 d L tab k r g1 g2 hR hin = AccMath.accVec (rowF fl tab (wL L).val (2 * t1.val + 1) (2 * k.val)) (offF fl (wL L).val (2 * t1.val + 1) (2 * k.val)) 3 25 := by
        rw [show pair1_next.sl.v1987_1 d L tab k r g1 g2 hR hin = addf (pair1_next.sl.v1951_1 d L tab k r g1 g2 hR hin) (pair1_next.sl.v1986_1 d L tab k r g1 g2 hR hin) from rfl, a_v1951_1]
        exact acc_step d L fl tab (wL L).val (2 * t1.val + 1) (2 * k.val) 0 _ hRA ⟨24, by decide⟩ ⟨3, by decide⟩ _ rfl _ hw_v1955_1 _ (k1_off74_form ..) _ _
      have a_v2023_1 : pair1_next.sl.v2023_1 d L tab k r g1 g2 hR hin = AccMath.accVec (rowF fl tab (wL L).val (2 * t1.val + 1) (2 * k.val)) (offF fl (wL L).val (2 * t1.val + 1) (2 * k.val)) 3 26 := by
        rw [show pair1_next.sl.v2023_1 d L tab k r g1 g2 hR hin = addf (pair1_next.sl.v1987_1 d L tab k r g1 g2 hR hin) (pair1_next.sl.v2022_1 d L tab k r g1 g2 hR hin) from rfl, a_v1987_1]
        exact acc_step d L fl tab (wL L).val (2 * t1.val + 1) (2 * k.val) 0 _ hRA ⟨25, by decide⟩ ⟨3, by decide⟩ _ rfl _ hw_v1991_1 _ (k1_off75_form ..) _ _
      have a_v2059_1 : pair1_next.sl.v2059_1 d L tab k r g1 g2 hR hin = AccMath.accVec (rowF fl tab (wL L).val (2 * t1.val + 1) (2 * k.val)) (offF fl (wL L).val (2 * t1.val + 1) (2 * k.val)) 3 27 := by
        rw [show pair1_next.sl.v2059_1 d L tab k r g1 g2 hR hin = addf (pair1_next.sl.v2023_1 d L tab k r g1 g2 hR hin) (pair1_next.sl.v2058_1 d L tab k r g1 g2 hR hin) from rfl, a_v2023_1]
        exact acc_step d L fl tab (wL L).val (2 * t1.val + 1) (2 * k.val) 0 _ hRA ⟨26, by decide⟩ ⟨3, by decide⟩ _ rfl _ hw_v2027_1 _ (k1_off76_form ..) _ _
      have a_v2095_1 : pair1_next.sl.v2095_1 d L tab k r g1 g2 hR hin = AccMath.accVec (rowF fl tab (wL L).val (2 * t1.val + 1) (2 * k.val)) (offF fl (wL L).val (2 * t1.val + 1) (2 * k.val)) 3 28 := by
        rw [show pair1_next.sl.v2095_1 d L tab k r g1 g2 hR hin = addf (pair1_next.sl.v2059_1 d L tab k r g1 g2 hR hin) (pair1_next.sl.v2094_1 d L tab k r g1 g2 hR hin) from rfl, a_v2059_1]
        exact acc_step d L fl tab (wL L).val (2 * t1.val + 1) (2 * k.val) 0 _ hRA ⟨27, by decide⟩ ⟨3, by decide⟩ _ rfl _ hw_v2063_1 _ (k1_off77_form ..) _ _
      have a_v2131_1 : pair1_next.sl.v2131_1 d L tab k r g1 g2 hR hin = AccMath.accVec (rowF fl tab (wL L).val (2 * t1.val + 1) (2 * k.val)) (offF fl (wL L).val (2 * t1.val + 1) (2 * k.val)) 3 29 := by
        rw [show pair1_next.sl.v2131_1 d L tab k r g1 g2 hR hin = addf (pair1_next.sl.v2095_1 d L tab k r g1 g2 hR hin) (pair1_next.sl.v2130_1 d L tab k r g1 g2 hR hin) from rfl, a_v2095_1]
        exact acc_step d L fl tab (wL L).val (2 * t1.val + 1) (2 * k.val) 0 _ hRA ⟨28, by decide⟩ ⟨3, by decide⟩ _ rfl _ hw_v2099_1 _ (k1_off78_form ..) _ _
      have a_v2167_1 : pair1_next.sl.v2167_1 d L tab k r g1 g2 hR hin = AccMath.accVec (rowF fl tab (wL L).val (2 * t1.val + 1) (2 * k.val)) (offF fl (wL L).val (2 * t1.val + 1) (2 * k.val)) 3 30 := by
        rw [show pair1_next.sl.v2167_1 d L tab k r g1 g2 hR hin = addf (pair1_next.sl.v2131_1 d L tab k r g1 g2 hR hin) (pair1_next.sl.v2166_1 d L tab k r g1 g2 hR hin) from rfl, a_v2131_1]
        exact acc_step d L fl tab (wL L).val (2 * t1.val + 1) (2 * k.val) 0 _ hRA ⟨29, by decide⟩ ⟨3, by decide⟩ _ rfl _ hw_v2135_1 _ (k1_off79_form ..) _ _
      have a_v2203_1 : pair1_next.sl.v2203_1 d L tab k r g1 g2 hR hin = AccMath.accVec (rowF fl tab (wL L).val (2 * t1.val + 1) (2 * k.val)) (offF fl (wL L).val (2 * t1.val + 1) (2 * k.val)) 3 31 := by
        rw [show pair1_next.sl.v2203_1 d L tab k r g1 g2 hR hin = addf (pair1_next.sl.v2167_1 d L tab k r g1 g2 hR hin) (pair1_next.sl.v2202_1 d L tab k r g1 g2 hR hin) from rfl, a_v2167_1]
        exact acc_step d L fl tab (wL L).val (2 * t1.val + 1) (2 * k.val) 0 _ hRA ⟨30, by decide⟩ ⟨3, by decide⟩ _ rfl _ hw_v2171_1 _ (k1_off80_form ..) _ _
      have a_v2239_1 : pair1_next.sl.v2239_1 d L tab k r g1 g2 hR hin = AccMath.accVec (rowF fl tab (wL L).val (2 * t1.val + 1) (2 * k.val)) (offF fl (wL L).val (2 * t1.val + 1) (2 * k.val)) 3 32 := by
        rw [show pair1_next.sl.v2239_1 d L tab k r g1 g2 hR hin = addf (pair1_next.sl.v2203_1 d L tab k r g1 g2 hR hin) (pair1_next.sl.v2238_1 d L tab k r g1 g2 hR hin) from rfl, a_v2203_1]
        exact acc_step d L fl tab (wL L).val (2 * t1.val + 1) (2 * k.val) 0 _ hRA ⟨31, by decide⟩ ⟨3, by decide⟩ _ rfl _ hw_v2207_1 _ (k1_off81_form ..) _ _
      have a_v1699_2 : pair1_next.sl.v1699_2 d L tab k r g1 g2 hR hin = AccMath.accVec (rowF fl tab (wL L).val (2 * t1.val + 1) (2 * k.val)) (offF fl (wL L).val (2 * t1.val + 1) (2 * k.val)) 3 33 := by
        rw [show pair1_next.sl.v1699_2 d L tab k r g1 g2 hR hin = addf (pair1_next.sl.v2239_1 d L tab k r g1 g2 hR hin) (pair1_next.sl.v1698_2 d L tab k r g1 g2 hR hin) from rfl, a_v2239_1]
        exact acc_step d L fl tab (wL L).val (2 * t1.val + 1) (2 * k.val) 0 _ hRA ⟨32, by decide⟩ ⟨3, by decide⟩ _ rfl _ hw_v1667_2 _ (k1_off66_form ..) _ _
      have a_v1735_2 : pair1_next.sl.v1735_2 d L tab k r g1 g2 hR hin = AccMath.accVec (rowF fl tab (wL L).val (2 * t1.val + 1) (2 * k.val)) (offF fl (wL L).val (2 * t1.val + 1) (2 * k.val)) 3 34 := by
        rw [show pair1_next.sl.v1735_2 d L tab k r g1 g2 hR hin = addf (pair1_next.sl.v1699_2 d L tab k r g1 g2 hR hin) (pair1_next.sl.v1734_2 d L tab k r g1 g2 hR hin) from rfl, a_v1699_2]
        exact acc_step d L fl tab (wL L).val (2 * t1.val + 1) (2 * k.val) 0 _ hRA ⟨33, by decide⟩ ⟨3, by decide⟩ _ rfl _ hw_v1703_2 _ (k1_off67_form ..) _ _
      have a_v1771_2 : pair1_next.sl.v1771_2 d L tab k r g1 g2 hR hin = AccMath.accVec (rowF fl tab (wL L).val (2 * t1.val + 1) (2 * k.val)) (offF fl (wL L).val (2 * t1.val + 1) (2 * k.val)) 3 35 := by
        rw [show pair1_next.sl.v1771_2 d L tab k r g1 g2 hR hin = addf (pair1_next.sl.v1735_2 d L tab k r g1 g2 hR hin) (pair1_next.sl.v1770_2 d L tab k r g1 g2 hR hin) from rfl, a_v1735_2]
        exact acc_step d L fl tab (wL L).val (2 * t1.val + 1) (2 * k.val) 0 _ hRA ⟨34, by decide⟩ ⟨3, by decide⟩ _ rfl _ hw_v1739_2 _ (k1_off68_form ..) _ _
      have a_v1807_2 : pair1_next.sl.v1807_2 d L tab k r g1 g2 hR hin = AccMath.accVec (rowF fl tab (wL L).val (2 * t1.val + 1) (2 * k.val)) (offF fl (wL L).val (2 * t1.val + 1) (2 * k.val)) 3 36 := by
        rw [show pair1_next.sl.v1807_2 d L tab k r g1 g2 hR hin = addf (pair1_next.sl.v1771_2 d L tab k r g1 g2 hR hin) (pair1_next.sl.v1806_2 d L tab k r g1 g2 hR hin) from rfl, a_v1771_2]
        exact acc_step d L fl tab (wL L).val (2 * t1.val + 1) (2 * k.val) 0 _ hRA ⟨35, by decide⟩ ⟨3, by decide⟩ _ rfl _ hw_v1775_2 _ (k1_off69_form ..) _ _
      have a_v1843_2 : pair1_next.sl.v1843_2 d L tab k r g1 g2 hR hin = AccMath.accVec (rowF fl tab (wL L).val (2 * t1.val + 1) (2 * k.val)) (offF fl (wL L).val (2 * t1.val + 1) (2 * k.val)) 3 37 := by
        rw [show pair1_next.sl.v1843_2 d L tab k r g1 g2 hR hin = addf (pair1_next.sl.v1807_2 d L tab k r g1 g2 hR hin) (pair1_next.sl.v1842_2 d L tab k r g1 g2 hR hin) from rfl, a_v1807_2]
        exact acc_step d L fl tab (wL L).val (2 * t1.val + 1) (2 * k.val) 0 _ hRA ⟨36, by decide⟩ ⟨3, by decide⟩ _ rfl _ hw_v1811_2 _ (k1_off70_form ..) _ _
      have a_v1879_2 : pair1_next.sl.v1879_2 d L tab k r g1 g2 hR hin = AccMath.accVec (rowF fl tab (wL L).val (2 * t1.val + 1) (2 * k.val)) (offF fl (wL L).val (2 * t1.val + 1) (2 * k.val)) 3 38 := by
        rw [show pair1_next.sl.v1879_2 d L tab k r g1 g2 hR hin = addf (pair1_next.sl.v1843_2 d L tab k r g1 g2 hR hin) (pair1_next.sl.v1878_2 d L tab k r g1 g2 hR hin) from rfl, a_v1843_2]
        exact acc_step d L fl tab (wL L).val (2 * t1.val + 1) (2 * k.val) 0 _ hRA ⟨37, by decide⟩ ⟨3, by decide⟩ _ rfl _ hw_v1847_2 _ (k1_off71_form ..) _ _
      have a_v1915_2 : pair1_next.sl.v1915_2 d L tab k r g1 g2 hR hin = AccMath.accVec (rowF fl tab (wL L).val (2 * t1.val + 1) (2 * k.val)) (offF fl (wL L).val (2 * t1.val + 1) (2 * k.val)) 3 39 := by
        rw [show pair1_next.sl.v1915_2 d L tab k r g1 g2 hR hin = addf (pair1_next.sl.v1879_2 d L tab k r g1 g2 hR hin) (pair1_next.sl.v1914_2 d L tab k r g1 g2 hR hin) from rfl, a_v1879_2]
        exact acc_step d L fl tab (wL L).val (2 * t1.val + 1) (2 * k.val) 0 _ hRA ⟨38, by decide⟩ ⟨3, by decide⟩ _ rfl _ hw_v1883_2 _ (k1_off72_form ..) _ _
      have a_v1951_2 : pair1_next.sl.v1951_2 d L tab k r g1 g2 hR hin = AccMath.accVec (rowF fl tab (wL L).val (2 * t1.val + 1) (2 * k.val)) (offF fl (wL L).val (2 * t1.val + 1) (2 * k.val)) 3 40 := by
        rw [show pair1_next.sl.v1951_2 d L tab k r g1 g2 hR hin = addf (pair1_next.sl.v1915_2 d L tab k r g1 g2 hR hin) (pair1_next.sl.v1950_2 d L tab k r g1 g2 hR hin) from rfl, a_v1915_2]
        exact acc_step d L fl tab (wL L).val (2 * t1.val + 1) (2 * k.val) 0 _ hRA ⟨39, by decide⟩ ⟨3, by decide⟩ _ rfl _ hw_v1919_2 _ (k1_off73_form ..) _ _
      have a_v1987_2 : pair1_next.sl.v1987_2 d L tab k r g1 g2 hR hin = AccMath.accVec (rowF fl tab (wL L).val (2 * t1.val + 1) (2 * k.val)) (offF fl (wL L).val (2 * t1.val + 1) (2 * k.val)) 3 41 := by
        rw [show pair1_next.sl.v1987_2 d L tab k r g1 g2 hR hin = addf (pair1_next.sl.v1951_2 d L tab k r g1 g2 hR hin) (pair1_next.sl.v1986_2 d L tab k r g1 g2 hR hin) from rfl, a_v1951_2]
        exact acc_step d L fl tab (wL L).val (2 * t1.val + 1) (2 * k.val) 0 _ hRA ⟨40, by decide⟩ ⟨3, by decide⟩ _ rfl _ hw_v1955_2 _ (k1_off74_form ..) _ _
      have a_v2023_2 : pair1_next.sl.v2023_2 d L tab k r g1 g2 hR hin = AccMath.accVec (rowF fl tab (wL L).val (2 * t1.val + 1) (2 * k.val)) (offF fl (wL L).val (2 * t1.val + 1) (2 * k.val)) 3 42 := by
        rw [show pair1_next.sl.v2023_2 d L tab k r g1 g2 hR hin = addf (pair1_next.sl.v1987_2 d L tab k r g1 g2 hR hin) (pair1_next.sl.v2022_2 d L tab k r g1 g2 hR hin) from rfl, a_v1987_2]
        exact acc_step d L fl tab (wL L).val (2 * t1.val + 1) (2 * k.val) 0 _ hRA ⟨41, by decide⟩ ⟨3, by decide⟩ _ rfl _ hw_v1991_2 _ (k1_off75_form ..) _ _
      have a_v2059_2 : pair1_next.sl.v2059_2 d L tab k r g1 g2 hR hin = AccMath.accVec (rowF fl tab (wL L).val (2 * t1.val + 1) (2 * k.val)) (offF fl (wL L).val (2 * t1.val + 1) (2 * k.val)) 3 43 := by
        rw [show pair1_next.sl.v2059_2 d L tab k r g1 g2 hR hin = addf (pair1_next.sl.v2023_2 d L tab k r g1 g2 hR hin) (pair1_next.sl.v2058_2 d L tab k r g1 g2 hR hin) from rfl, a_v2023_2]
        exact acc_step d L fl tab (wL L).val (2 * t1.val + 1) (2 * k.val) 0 _ hRA ⟨42, by decide⟩ ⟨3, by decide⟩ _ rfl _ hw_v2027_2 _ (k1_off76_form ..) _ _
      have a_v2095_2 : pair1_next.sl.v2095_2 d L tab k r g1 g2 hR hin = AccMath.accVec (rowF fl tab (wL L).val (2 * t1.val + 1) (2 * k.val)) (offF fl (wL L).val (2 * t1.val + 1) (2 * k.val)) 3 44 := by
        rw [show pair1_next.sl.v2095_2 d L tab k r g1 g2 hR hin = addf (pair1_next.sl.v2059_2 d L tab k r g1 g2 hR hin) (pair1_next.sl.v2094_2 d L tab k r g1 g2 hR hin) from rfl, a_v2059_2]
        exact acc_step d L fl tab (wL L).val (2 * t1.val + 1) (2 * k.val) 0 _ hRA ⟨43, by decide⟩ ⟨3, by decide⟩ _ rfl _ hw_v2063_2 _ (k1_off77_form ..) _ _
      have a_v2131_2 : pair1_next.sl.v2131_2 d L tab k r g1 g2 hR hin = AccMath.accVec (rowF fl tab (wL L).val (2 * t1.val + 1) (2 * k.val)) (offF fl (wL L).val (2 * t1.val + 1) (2 * k.val)) 3 45 := by
        rw [show pair1_next.sl.v2131_2 d L tab k r g1 g2 hR hin = addf (pair1_next.sl.v2095_2 d L tab k r g1 g2 hR hin) (pair1_next.sl.v2130_2 d L tab k r g1 g2 hR hin) from rfl, a_v2095_2]
        exact acc_step d L fl tab (wL L).val (2 * t1.val + 1) (2 * k.val) 0 _ hRA ⟨44, by decide⟩ ⟨3, by decide⟩ _ rfl _ hw_v2099_2 _ (k1_off78_form ..) _ _
      have a_v2167_2 : pair1_next.sl.v2167_2 d L tab k r g1 g2 hR hin = AccMath.accVec (rowF fl tab (wL L).val (2 * t1.val + 1) (2 * k.val)) (offF fl (wL L).val (2 * t1.val + 1) (2 * k.val)) 3 46 := by
        rw [show pair1_next.sl.v2167_2 d L tab k r g1 g2 hR hin = addf (pair1_next.sl.v2131_2 d L tab k r g1 g2 hR hin) (pair1_next.sl.v2166_2 d L tab k r g1 g2 hR hin) from rfl, a_v2131_2]
        exact acc_step d L fl tab (wL L).val (2 * t1.val + 1) (2 * k.val) 0 _ hRA ⟨45, by decide⟩ ⟨3, by decide⟩ _ rfl _ hw_v2135_2 _ (k1_off79_form ..) _ _
      have a_v2203_2 : pair1_next.sl.v2203_2 d L tab k r g1 g2 hR hin = AccMath.accVec (rowF fl tab (wL L).val (2 * t1.val + 1) (2 * k.val)) (offF fl (wL L).val (2 * t1.val + 1) (2 * k.val)) 3 47 := by
        rw [show pair1_next.sl.v2203_2 d L tab k r g1 g2 hR hin = addf (pair1_next.sl.v2167_2 d L tab k r g1 g2 hR hin) (pair1_next.sl.v2202_2 d L tab k r g1 g2 hR hin) from rfl, a_v2167_2]
        exact acc_step d L fl tab (wL L).val (2 * t1.val + 1) (2 * k.val) 0 _ hRA ⟨46, by decide⟩ ⟨3, by decide⟩ _ rfl _ hw_v2171_2 _ (k1_off80_form ..) _ _
      have a_v2239_2 : pair1_next.sl.v2239_2 d L tab k r g1 g2 hR hin = AccMath.accVec (rowF fl tab (wL L).val (2 * t1.val + 1) (2 * k.val)) (offF fl (wL L).val (2 * t1.val + 1) (2 * k.val)) 3 48 := by
        rw [show pair1_next.sl.v2239_2 d L tab k r g1 g2 hR hin = addf (pair1_next.sl.v2203_2 d L tab k r g1 g2 hR hin) (pair1_next.sl.v2238_2 d L tab k r g1 g2 hR hin) from rfl, a_v2203_2]
        exact acc_step d L fl tab (wL L).val (2 * t1.val + 1) (2 * k.val) 0 _ hRA ⟨47, by decide⟩ ⟨3, by decide⟩ _ rfl _ hw_v2207_2 _ (k1_off81_form ..) _ _
      have a_v1488 : pair1_next.sl.v1488 d L tab k r g1 g2 hR hin = AccMath.accVec (rowF fl tab (wL L).val (2 * t1.val + 1) (2 * k.val)) (offF fl (wL L).val (2 * t1.val + 1) (2 * k.val)) 3 49 := by
        rw [show pair1_next.sl.v1488 d L tab k r g1 g2 hR hin = addf (pair1_next.sl.v2239_2 d L tab k r g1 g2 hR hin) (pair1_next.sl.v1487 d L tab k r g1 g2 hR hin) from rfl, a_v2239_2]
        exact acc_step d L fl tab (wL L).val (2 * t1.val + 1) (2 * k.val) 0 _ hRA ⟨48, by decide⟩ ⟨3, by decide⟩ _ rfl _ hw_v1456 _ (k1_off83_form ..) _ _
      have a_v1522 : pair1_next.sl.v1522 d L tab k r g1 g2 hR hin = AccMath.accVec (rowF fl tab (wL L).val (2 * t1.val + 1) (2 * k.val)) (offF fl (wL L).val (2 * t1.val + 1) (2 * k.val)) 3 50 := by
        rw [show pair1_next.sl.v1522 d L tab k r g1 g2 hR hin = addf (pair1_next.sl.v1488 d L tab k r g1 g2 hR hin) (pair1_next.sl.v1521 d L tab k r g1 g2 hR hin) from rfl, a_v1488]
        exact acc_step d L fl tab (wL L).val (2 * t1.val + 1) (2 * k.val) 0 _ hRA ⟨49, by decide⟩ ⟨3, by decide⟩ _ rfl _ hw_v1490 _ (k1_off84_form ..) _ _
      have a_v1561_B0 : pair1_next.sl.v1561 = AccMath.accVec (rowF fl tab (wL L).val (2 * t1.val + 1) (2 * k.val + 1)) (offF fl (wL L).val (2 * t1.val + 1) (2 * k.val + 1)) 0 0 := acc_zero fl tab (wL L).val (2 * t1.val + 1) (2 * k.val + 1) 0
      have a_v1675_3 : pair1_next.sl.v1675_3 d L tab t1 k r g1 g2 hR hin h10 = AccMath.accVec (rowF fl tab (wL L).val (2 * t1.val + 1) (2 * k.val + 1)) (offF fl (wL L).val (2 * t1.val + 1) (2 * k.val + 1)) 0 1 := by
        rw [show pair1_next.sl.v1675_3 d L tab t1 k r g1 g2 hR hin h10 = addf (pair1_next.sl.v1561) (pair1_next.sl.v1674_3 d L tab t1 k r g1 g2 hR hin h10) from rfl, a_v1561_B0]
        exact acc_step d L fl tab (wL L).val (2 * t1.val + 1) (2 * k.val + 1) 1 _ hRB ⟨0, by decide⟩ ⟨0, by decide⟩ _ rfl _ hw_v1667_3 _ (k1_off93_form ..) _ _
      have a_v1711_3 : pair1_next.sl.v1711_3 d L tab t1 k r g1 g2 hR hin h10 = AccMath.accVec (rowF fl tab (wL L).val (2 * t1.val + 1) (2 * k.val + 1)) (offF fl (wL L).val (2 * t1.val + 1) (2 * k.val + 1)) 0 2 := by
        rw [show pair1_next.sl.v1711_3 d L tab t1 k r g1 g2 hR hin h10 = addf (pair1_next.sl.v1675_3 d L tab t1 k r g1 g2 hR hin h10) (pair1_next.sl.v1710_3 d L tab t1 k r g1 g2 hR hin h10) from rfl, a_v1675_3]
        exact acc_step d L fl tab (wL L).val (2 * t1.val + 1) (2 * k.val + 1) 1 _ hRB ⟨1, by decide⟩ ⟨0, by decide⟩ _ rfl _ hw_v1703_3 _ (k1_off94_form ..) _ _
      have a_v1747_3 : pair1_next.sl.v1747_3 d L tab t1 k r g1 g2 hR hin h10 = AccMath.accVec (rowF fl tab (wL L).val (2 * t1.val + 1) (2 * k.val + 1)) (offF fl (wL L).val (2 * t1.val + 1) (2 * k.val + 1)) 0 3 := by
        rw [show pair1_next.sl.v1747_3 d L tab t1 k r g1 g2 hR hin h10 = addf (pair1_next.sl.v1711_3 d L tab t1 k r g1 g2 hR hin h10) (pair1_next.sl.v1746_3 d L tab t1 k r g1 g2 hR hin h10) from rfl, a_v1711_3]
        exact acc_step d L fl tab (wL L).val (2 * t1.val + 1) (2 * k.val + 1) 1 _ hRB ⟨2, by decide⟩ ⟨0, by decide⟩ _ rfl _ hw_v1739_3 _ (k1_off95_form ..) _ _
      have a_v1783_3 : pair1_next.sl.v1783_3 d L tab t1 k r g1 g2 hR hin h10 = AccMath.accVec (rowF fl tab (wL L).val (2 * t1.val + 1) (2 * k.val + 1)) (offF fl (wL L).val (2 * t1.val + 1) (2 * k.val + 1)) 0 4 := by
        rw [show pair1_next.sl.v1783_3 d L tab t1 k r g1 g2 hR hin h10 = addf (pair1_next.sl.v1747_3 d L tab t1 k r g1 g2 hR hin h10) (pair1_next.sl.v1782_3 d L tab t1 k r g1 g2 hR hin h10) from rfl, a_v1747_3]
        exact acc_step d L fl tab (wL L).val (2 * t1.val + 1) (2 * k.val + 1) 1 _ hRB ⟨3, by decide⟩ ⟨0, by decide⟩ _ rfl _ hw_v1775_3 _ (k1_off96_form ..) _ _
      have a_v1819_3 : pair1_next.sl.v1819_3 d L tab t1 k r g1 g2 hR hin h10 = AccMath.accVec (rowF fl tab (wL L).val (2 * t1.val + 1) (2 * k.val + 1)) (offF fl (wL L).val (2 * t1.val + 1) (2 * k.val + 1)) 0 5 := by
        rw [show pair1_next.sl.v1819_3 d L tab t1 k r g1 g2 hR hin h10 = addf (pair1_next.sl.v1783_3 d L tab t1 k r g1 g2 hR hin h10) (pair1_next.sl.v1818_3 d L tab t1 k r g1 g2 hR hin h10) from rfl, a_v1783_3]
        exact acc_step d L fl tab (wL L).val (2 * t1.val + 1) (2 * k.val + 1) 1 _ hRB ⟨4, by decide⟩ ⟨0, by decide⟩ _ rfl _ hw_v1811_3 _ (k1_off97_form ..) _ _
      have a_v1855_3 : pair1_next.sl.v1855_3 d L tab t1 k r g1 g2 hR hin h10 = AccMath.accVec (rowF fl tab (wL L).val (2 * t1.val + 1) (2 * k.val + 1)) (offF fl (wL L).val (2 * t1.val + 1) (2 * k.val + 1)) 0 6 := by
        rw [show pair1_next.sl.v1855_3 d L tab t1 k r g1 g2 hR hin h10 = addf (pair1_next.sl.v1819_3 d L tab t1 k r g1 g2 hR hin h10) (pair1_next.sl.v1854_3 d L tab t1 k r g1 g2 hR hin h10) from rfl, a_v1819_3]
        exact acc_step d L fl tab (wL L).val (2 * t1.val + 1) (2 * k.val + 1) 1 _ hRB ⟨5, by decide⟩ ⟨0, by decide⟩ _ rfl _ hw_v1847_3 _ (k1_off98_form ..) _ _
      have a_v1891_3 : pair1_next.sl.v1891_3 d L tab t1 k r g1 g2 hR hin h10 = AccMath.accVec (rowF fl tab (wL L).val (2 * t1.val + 1) (2 * k.val + 1)) (offF fl (wL L).val (2 * t1.val + 1) (2 * k.val + 1)) 0 7 := by
        rw [show pair1_next.sl.v1891_3 d L tab t1 k r g1 g2 hR hin h10 = addf (pair1_next.sl.v1855_3 d L tab t1 k r g1 g2 hR hin h10) (pair1_next.sl.v1890_3 d L tab t1 k r g1 g2 hR hin h10) from rfl, a_v1855_3]
        exact acc_step d L fl tab (wL L).val (2 * t1.val + 1) (2 * k.val + 1) 1 _ hRB ⟨6, by decide⟩ ⟨0, by decide⟩ _ rfl _ hw_v1883_3 _ (k1_off99_form ..) _ _
      have a_v1927_3 : pair1_next.sl.v1927_3 d L tab t1 k r g1 g2 hR hin h10 = AccMath.accVec (rowF fl tab (wL L).val (2 * t1.val + 1) (2 * k.val + 1)) (offF fl (wL L).val (2 * t1.val + 1) (2 * k.val + 1)) 0 8 := by
        rw [show pair1_next.sl.v1927_3 d L tab t1 k r g1 g2 hR hin h10 = addf (pair1_next.sl.v1891_3 d L tab t1 k r g1 g2 hR hin h10) (pair1_next.sl.v1926_3 d L tab t1 k r g1 g2 hR hin h10) from rfl, a_v1891_3]
        exact acc_step d L fl tab (wL L).val (2 * t1.val + 1) (2 * k.val + 1) 1 _ hRB ⟨7, by decide⟩ ⟨0, by decide⟩ _ rfl _ hw_v1919_3 _ (k1_off100_form ..) _ _
      have a_v1963_3 : pair1_next.sl.v1963_3 d L tab t1 k r g1 g2 hR hin h10 = AccMath.accVec (rowF fl tab (wL L).val (2 * t1.val + 1) (2 * k.val + 1)) (offF fl (wL L).val (2 * t1.val + 1) (2 * k.val + 1)) 0 9 := by
        rw [show pair1_next.sl.v1963_3 d L tab t1 k r g1 g2 hR hin h10 = addf (pair1_next.sl.v1927_3 d L tab t1 k r g1 g2 hR hin h10) (pair1_next.sl.v1962_3 d L tab t1 k r g1 g2 hR hin h10) from rfl, a_v1927_3]
        exact acc_step d L fl tab (wL L).val (2 * t1.val + 1) (2 * k.val + 1) 1 _ hRB ⟨8, by decide⟩ ⟨0, by decide⟩ _ rfl _ hw_v1955_3 _ (k1_off101_form ..) _ _
      have a_v1999_3 : pair1_next.sl.v1999_3 d L tab t1 k r g1 g2 hR hin h10 = AccMath.accVec (rowF fl tab (wL L).val (2 * t1.val + 1) (2 * k.val + 1)) (offF fl (wL L).val (2 * t1.val + 1) (2 * k.val + 1)) 0 10 := by
        rw [show pair1_next.sl.v1999_3 d L tab t1 k r g1 g2 hR hin h10 = addf (pair1_next.sl.v1963_3 d L tab t1 k r g1 g2 hR hin h10) (pair1_next.sl.v1998_3 d L tab t1 k r g1 g2 hR hin h10) from rfl, a_v1963_3]
        exact acc_step d L fl tab (wL L).val (2 * t1.val + 1) (2 * k.val + 1) 1 _ hRB ⟨9, by decide⟩ ⟨0, by decide⟩ _ rfl _ hw_v1991_3 _ (k1_off102_form ..) _ _
      have a_v2035_3 : pair1_next.sl.v2035_3 d L tab t1 k r g1 g2 hR hin h10 = AccMath.accVec (rowF fl tab (wL L).val (2 * t1.val + 1) (2 * k.val + 1)) (offF fl (wL L).val (2 * t1.val + 1) (2 * k.val + 1)) 0 11 := by
        rw [show pair1_next.sl.v2035_3 d L tab t1 k r g1 g2 hR hin h10 = addf (pair1_next.sl.v1999_3 d L tab t1 k r g1 g2 hR hin h10) (pair1_next.sl.v2034_3 d L tab t1 k r g1 g2 hR hin h10) from rfl, a_v1999_3]
        exact acc_step d L fl tab (wL L).val (2 * t1.val + 1) (2 * k.val + 1) 1 _ hRB ⟨10, by decide⟩ ⟨0, by decide⟩ _ rfl _ hw_v2027_3 _ (k1_off103_form ..) _ _
      have a_v2071_3 : pair1_next.sl.v2071_3 d L tab t1 k r g1 g2 hR hin h10 = AccMath.accVec (rowF fl tab (wL L).val (2 * t1.val + 1) (2 * k.val + 1)) (offF fl (wL L).val (2 * t1.val + 1) (2 * k.val + 1)) 0 12 := by
        rw [show pair1_next.sl.v2071_3 d L tab t1 k r g1 g2 hR hin h10 = addf (pair1_next.sl.v2035_3 d L tab t1 k r g1 g2 hR hin h10) (pair1_next.sl.v2070_3 d L tab t1 k r g1 g2 hR hin h10) from rfl, a_v2035_3]
        exact acc_step d L fl tab (wL L).val (2 * t1.val + 1) (2 * k.val + 1) 1 _ hRB ⟨11, by decide⟩ ⟨0, by decide⟩ _ rfl _ hw_v2063_3 _ (k1_off104_form ..) _ _
      have a_v2107_3 : pair1_next.sl.v2107_3 d L tab t1 k r g1 g2 hR hin h10 = AccMath.accVec (rowF fl tab (wL L).val (2 * t1.val + 1) (2 * k.val + 1)) (offF fl (wL L).val (2 * t1.val + 1) (2 * k.val + 1)) 0 13 := by
        rw [show pair1_next.sl.v2107_3 d L tab t1 k r g1 g2 hR hin h10 = addf (pair1_next.sl.v2071_3 d L tab t1 k r g1 g2 hR hin h10) (pair1_next.sl.v2106_3 d L tab t1 k r g1 g2 hR hin h10) from rfl, a_v2071_3]
        exact acc_step d L fl tab (wL L).val (2 * t1.val + 1) (2 * k.val + 1) 1 _ hRB ⟨12, by decide⟩ ⟨0, by decide⟩ _ rfl _ hw_v2099_3 _ (k1_off105_form ..) _ _
      have a_v2143_3 : pair1_next.sl.v2143_3 d L tab t1 k r g1 g2 hR hin h10 = AccMath.accVec (rowF fl tab (wL L).val (2 * t1.val + 1) (2 * k.val + 1)) (offF fl (wL L).val (2 * t1.val + 1) (2 * k.val + 1)) 0 14 := by
        rw [show pair1_next.sl.v2143_3 d L tab t1 k r g1 g2 hR hin h10 = addf (pair1_next.sl.v2107_3 d L tab t1 k r g1 g2 hR hin h10) (pair1_next.sl.v2142_3 d L tab t1 k r g1 g2 hR hin h10) from rfl, a_v2107_3]
        exact acc_step d L fl tab (wL L).val (2 * t1.val + 1) (2 * k.val + 1) 1 _ hRB ⟨13, by decide⟩ ⟨0, by decide⟩ _ rfl _ hw_v2135_3 _ (k1_off106_form ..) _ _
      have a_v2179_3 : pair1_next.sl.v2179_3 d L tab t1 k r g1 g2 hR hin h10 = AccMath.accVec (rowF fl tab (wL L).val (2 * t1.val + 1) (2 * k.val + 1)) (offF fl (wL L).val (2 * t1.val + 1) (2 * k.val + 1)) 0 15 := by
        rw [show pair1_next.sl.v2179_3 d L tab t1 k r g1 g2 hR hin h10 = addf (pair1_next.sl.v2143_3 d L tab t1 k r g1 g2 hR hin h10) (pair1_next.sl.v2178_3 d L tab t1 k r g1 g2 hR hin h10) from rfl, a_v2143_3]
        exact acc_step d L fl tab (wL L).val (2 * t1.val + 1) (2 * k.val + 1) 1 _ hRB ⟨14, by decide⟩ ⟨0, by decide⟩ _ rfl _ hw_v2171_3 _ (k1_off107_form ..) _ _
      have a_v2215_3 : pair1_next.sl.v2215_3 d L tab t1 k r g1 g2 hR hin h10 = AccMath.accVec (rowF fl tab (wL L).val (2 * t1.val + 1) (2 * k.val + 1)) (offF fl (wL L).val (2 * t1.val + 1) (2 * k.val + 1)) 0 16 := by
        rw [show pair1_next.sl.v2215_3 d L tab t1 k r g1 g2 hR hin h10 = addf (pair1_next.sl.v2179_3 d L tab t1 k r g1 g2 hR hin h10) (pair1_next.sl.v2214_3 d L tab t1 k r g1 g2 hR hin h10) from rfl, a_v2179_3]
        exact acc_step d L fl tab (wL L).val (2 * t1.val + 1) (2 * k.val + 1) 1 _ hRB ⟨15, by decide⟩ ⟨0, by decide⟩ _ rfl _ hw_v2207_3 _ (k1_off108_form ..) _ _
      have a_v1675_4 : pair1_next.sl.v1675_4 d L tab t1 k r g1 g2 hR hin h10 = AccMath.accVec (rowF fl tab (wL L).val (2 * t1.val + 1) (2 * k.val + 1)) (offF fl (wL L).val (2 * t1.val + 1) (2 * k.val + 1)) 0 17 := by
        rw [show pair1_next.sl.v1675_4 d L tab t1 k r g1 g2 hR hin h10 = addf (pair1_next.sl.v2215_3 d L tab t1 k r g1 g2 hR hin h10) (pair1_next.sl.v1674_4 d L tab t1 k r g1 g2 hR hin h10) from rfl, a_v2215_3]
        exact acc_step d L fl tab (wL L).val (2 * t1.val + 1) (2 * k.val + 1) 1 _ hRB ⟨16, by decide⟩ ⟨0, by decide⟩ _ rfl _ hw_v1667_4 _ (k1_off93_form ..) _ _
      have a_v1711_4 : pair1_next.sl.v1711_4 d L tab t1 k r g1 g2 hR hin h10 = AccMath.accVec (rowF fl tab (wL L).val (2 * t1.val + 1) (2 * k.val + 1)) (offF fl (wL L).val (2 * t1.val + 1) (2 * k.val + 1)) 0 18 := by
        rw [show pair1_next.sl.v1711_4 d L tab t1 k r g1 g2 hR hin h10 = addf (pair1_next.sl.v1675_4 d L tab t1 k r g1 g2 hR hin h10) (pair1_next.sl.v1710_4 d L tab t1 k r g1 g2 hR hin h10) from rfl, a_v1675_4]
        exact acc_step d L fl tab (wL L).val (2 * t1.val + 1) (2 * k.val + 1) 1 _ hRB ⟨17, by decide⟩ ⟨0, by decide⟩ _ rfl _ hw_v1703_4 _ (k1_off94_form ..) _ _
      have a_v1747_4 : pair1_next.sl.v1747_4 d L tab t1 k r g1 g2 hR hin h10 = AccMath.accVec (rowF fl tab (wL L).val (2 * t1.val + 1) (2 * k.val + 1)) (offF fl (wL L).val (2 * t1.val + 1) (2 * k.val + 1)) 0 19 := by
        rw [show pair1_next.sl.v1747_4 d L tab t1 k r g1 g2 hR hin h10 = addf (pair1_next.sl.v1711_4 d L tab t1 k r g1 g2 hR hin h10) (pair1_next.sl.v1746_4 d L tab t1 k r g1 g2 hR hin h10) from rfl, a_v1711_4]
        exact acc_step d L fl tab (wL L).val (2 * t1.val + 1) (2 * k.val + 1) 1 _ hRB ⟨18, by decide⟩ ⟨0, by decide⟩ _ rfl _ hw_v1739_4 _ (k1_off95_form ..) _ _
      have a_v1783_4 : pair1_next.sl.v1783_4 d L tab t1 k r g1 g2 hR hin h10 = AccMath.accVec (rowF fl tab (wL L).val (2 * t1.val + 1) (2 * k.val + 1)) (offF fl (wL L).val (2 * t1.val + 1) (2 * k.val + 1)) 0 20 := by
        rw [show pair1_next.sl.v1783_4 d L tab t1 k r g1 g2 hR hin h10 = addf (pair1_next.sl.v1747_4 d L tab t1 k r g1 g2 hR hin h10) (pair1_next.sl.v1782_4 d L tab t1 k r g1 g2 hR hin h10) from rfl, a_v1747_4]
        exact acc_step d L fl tab (wL L).val (2 * t1.val + 1) (2 * k.val + 1) 1 _ hRB ⟨19, by decide⟩ ⟨0, by decide⟩ _ rfl _ hw_v1775_4 _ (k1_off96_form ..) _ _
      have a_v1819_4 : pair1_next.sl.v1819_4 d L tab t1 k r g1 g2 hR hin h10 = AccMath.accVec (rowF fl tab (wL L).val (2 * t1.val + 1) (2 * k.val + 1)) (offF fl (wL L).val (2 * t1.val + 1) (2 * k.val + 1)) 0 21 := by
        rw [show pair1_next.sl.v1819_4 d L tab t1 k r g1 g2 hR hin h10 = addf (pair1_next.sl.v1783_4 d L tab t1 k r g1 g2 hR hin h10) (pair1_next.sl.v1818_4 d L tab t1 k r g1 g2 hR hin h10) from rfl, a_v1783_4]
        exact acc_step d L fl tab (wL L).val (2 * t1.val + 1) (2 * k.val + 1) 1 _ hRB ⟨20, by decide⟩ ⟨0, by decide⟩ _ rfl _ hw_v1811_4 _ (k1_off97_form ..) _ _
      have a_v1855_4 : pair1_next.sl.v1855_4 d L tab t1 k r g1 g2 hR hin h10 = AccMath.accVec (rowF fl tab (wL L).val (2 * t1.val + 1) (2 * k.val + 1)) (offF fl (wL L).val (2 * t1.val + 1) (2 * k.val + 1)) 0 22 := by
        rw [show pair1_next.sl.v1855_4 d L tab t1 k r g1 g2 hR hin h10 = addf (pair1_next.sl.v1819_4 d L tab t1 k r g1 g2 hR hin h10) (pair1_next.sl.v1854_4 d L tab t1 k r g1 g2 hR hin h10) from rfl, a_v1819_4]
        exact acc_step d L fl tab (wL L).val (2 * t1.val + 1) (2 * k.val + 1) 1 _ hRB ⟨21, by decide⟩ ⟨0, by decide⟩ _ rfl _ hw_v1847_4 _ (k1_off98_form ..) _ _
      have a_v1891_4 : pair1_next.sl.v1891_4 d L tab t1 k r g1 g2 hR hin h10 = AccMath.accVec (rowF fl tab (wL L).val (2 * t1.val + 1) (2 * k.val + 1)) (offF fl (wL L).val (2 * t1.val + 1) (2 * k.val + 1)) 0 23 := by
        rw [show pair1_next.sl.v1891_4 d L tab t1 k r g1 g2 hR hin h10 = addf (pair1_next.sl.v1855_4 d L tab t1 k r g1 g2 hR hin h10) (pair1_next.sl.v1890_4 d L tab t1 k r g1 g2 hR hin h10) from rfl, a_v1855_4]
        exact acc_step d L fl tab (wL L).val (2 * t1.val + 1) (2 * k.val + 1) 1 _ hRB ⟨22, by decide⟩ ⟨0, by decide⟩ _ rfl _ hw_v1883_4 _ (k1_off99_form ..) _ _
      have a_v1927_4 : pair1_next.sl.v1927_4 d L tab t1 k r g1 g2 hR hin h10 = AccMath.accVec (rowF fl tab (wL L).val (2 * t1.val + 1) (2 * k.val + 1)) (offF fl (wL L).val (2 * t1.val + 1) (2 * k.val + 1)) 0 24 := by
        rw [show pair1_next.sl.v1927_4 d L tab t1 k r g1 g2 hR hin h10 = addf (pair1_next.sl.v1891_4 d L tab t1 k r g1 g2 hR hin h10) (pair1_next.sl.v1926_4 d L tab t1 k r g1 g2 hR hin h10) from rfl, a_v1891_4]
        exact acc_step d L fl tab (wL L).val (2 * t1.val + 1) (2 * k.val + 1) 1 _ hRB ⟨23, by decide⟩ ⟨0, by decide⟩ _ rfl _ hw_v1919_4 _ (k1_off100_form ..) _ _
      have a_v1963_4 : pair1_next.sl.v1963_4 d L tab t1 k r g1 g2 hR hin h10 = AccMath.accVec (rowF fl tab (wL L).val (2 * t1.val + 1) (2 * k.val + 1)) (offF fl (wL L).val (2 * t1.val + 1) (2 * k.val + 1)) 0 25 := by
        rw [show pair1_next.sl.v1963_4 d L tab t1 k r g1 g2 hR hin h10 = addf (pair1_next.sl.v1927_4 d L tab t1 k r g1 g2 hR hin h10) (pair1_next.sl.v1962_4 d L tab t1 k r g1 g2 hR hin h10) from rfl, a_v1927_4]
        exact acc_step d L fl tab (wL L).val (2 * t1.val + 1) (2 * k.val + 1) 1 _ hRB ⟨24, by decide⟩ ⟨0, by decide⟩ _ rfl _ hw_v1955_4 _ (k1_off101_form ..) _ _
      have a_v1999_4 : pair1_next.sl.v1999_4 d L tab t1 k r g1 g2 hR hin h10 = AccMath.accVec (rowF fl tab (wL L).val (2 * t1.val + 1) (2 * k.val + 1)) (offF fl (wL L).val (2 * t1.val + 1) (2 * k.val + 1)) 0 26 := by
        rw [show pair1_next.sl.v1999_4 d L tab t1 k r g1 g2 hR hin h10 = addf (pair1_next.sl.v1963_4 d L tab t1 k r g1 g2 hR hin h10) (pair1_next.sl.v1998_4 d L tab t1 k r g1 g2 hR hin h10) from rfl, a_v1963_4]
        exact acc_step d L fl tab (wL L).val (2 * t1.val + 1) (2 * k.val + 1) 1 _ hRB ⟨25, by decide⟩ ⟨0, by decide⟩ _ rfl _ hw_v1991_4 _ (k1_off102_form ..) _ _
      have a_v2035_4 : pair1_next.sl.v2035_4 d L tab t1 k r g1 g2 hR hin h10 = AccMath.accVec (rowF fl tab (wL L).val (2 * t1.val + 1) (2 * k.val + 1)) (offF fl (wL L).val (2 * t1.val + 1) (2 * k.val + 1)) 0 27 := by
        rw [show pair1_next.sl.v2035_4 d L tab t1 k r g1 g2 hR hin h10 = addf (pair1_next.sl.v1999_4 d L tab t1 k r g1 g2 hR hin h10) (pair1_next.sl.v2034_4 d L tab t1 k r g1 g2 hR hin h10) from rfl, a_v1999_4]
        exact acc_step d L fl tab (wL L).val (2 * t1.val + 1) (2 * k.val + 1) 1 _ hRB ⟨26, by decide⟩ ⟨0, by decide⟩ _ rfl _ hw_v2027_4 _ (k1_off103_form ..) _ _
      have a_v2071_4 : pair1_next.sl.v2071_4 d L tab t1 k r g1 g2 hR hin h10 = AccMath.accVec (rowF fl tab (wL L).val (2 * t1.val + 1) (2 * k.val + 1)) (offF fl (wL L).val (2 * t1.val + 1) (2 * k.val + 1)) 0 28 := by
        rw [show pair1_next.sl.v2071_4 d L tab t1 k r g1 g2 hR hin h10 = addf (pair1_next.sl.v2035_4 d L tab t1 k r g1 g2 hR hin h10) (pair1_next.sl.v2070_4 d L tab t1 k r g1 g2 hR hin h10) from rfl, a_v2035_4]
        exact acc_step d L fl tab (wL L).val (2 * t1.val + 1) (2 * k.val + 1) 1 _ hRB ⟨27, by decide⟩ ⟨0, by decide⟩ _ rfl _ hw_v2063_4 _ (k1_off104_form ..) _ _
      have a_v2107_4 : pair1_next.sl.v2107_4 d L tab t1 k r g1 g2 hR hin h10 = AccMath.accVec (rowF fl tab (wL L).val (2 * t1.val + 1) (2 * k.val + 1)) (offF fl (wL L).val (2 * t1.val + 1) (2 * k.val + 1)) 0 29 := by
        rw [show pair1_next.sl.v2107_4 d L tab t1 k r g1 g2 hR hin h10 = addf (pair1_next.sl.v2071_4 d L tab t1 k r g1 g2 hR hin h10) (pair1_next.sl.v2106_4 d L tab t1 k r g1 g2 hR hin h10) from rfl, a_v2071_4]
        exact acc_step d L fl tab (wL L).val (2 * t1.val + 1) (2 * k.val + 1) 1 _ hRB ⟨28, by decide⟩ ⟨0, by decide⟩ _ rfl _ hw_v2099_4 _ (k1_off105_form ..) _ _
      have a_v2143_4 : pair1_next.sl.v2143_4 d L tab t1 k r g1 g2 hR hin h10 = AccMath.accVec (rowF fl tab (wL L).val (2 * t1.val + 1) (2 * k.val + 1)) (offF fl (wL L).val (2 * t1.val + 1) (2 * k.val + 1)) 0 30 := by
        rw [show pair1_next.sl.v2143_4 d L tab t1 k r g1 g2 hR hin h10 = addf (pair1_next.sl.v2107_4 d L tab t1 k r g1 g2 hR hin h10) (pair1_next.sl.v2142_4 d L tab t1 k r g1 g2 hR hin h10) from rfl, a_v2107_4]
        exact acc_step d L fl tab (wL L).val (2 * t1.val + 1) (2 * k.val + 1) 1 _ hRB ⟨29, by decide⟩ ⟨0, by decide⟩ _ rfl _ hw_v2135_4 _ (k1_off106_form ..) _ _
      have a_v2179_4 : pair1_next.sl.v2179_4 d L tab t1 k r g1 g2 hR hin h10 = AccMath.accVec (rowF fl tab (wL L).val (2 * t1.val + 1) (2 * k.val + 1)) (offF fl (wL L).val (2 * t1.val + 1) (2 * k.val + 1)) 0 31 := by
        rw [show pair1_next.sl.v2179_4 d L tab t1 k r g1 g2 hR hin h10 = addf (pair1_next.sl.v2143_4 d L tab t1 k r g1 g2 hR hin h10) (pair1_next.sl.v2178_4 d L tab t1 k r g1 g2 hR hin h10) from rfl, a_v2143_4]
        exact acc_step d L fl tab (wL L).val (2 * t1.val + 1) (2 * k.val + 1) 1 _ hRB ⟨30, by decide⟩ ⟨0, by decide⟩ _ rfl _ hw_v2171_4 _ (k1_off107_form ..) _ _
      have a_v2215_4 : pair1_next.sl.v2215_4 d L tab t1 k r g1 g2 hR hin h10 = AccMath.accVec (rowF fl tab (wL L).val (2 * t1.val + 1) (2 * k.val + 1)) (offF fl (wL L).val (2 * t1.val + 1) (2 * k.val + 1)) 0 32 := by
        rw [show pair1_next.sl.v2215_4 d L tab t1 k r g1 g2 hR hin h10 = addf (pair1_next.sl.v2179_4 d L tab t1 k r g1 g2 hR hin h10) (pair1_next.sl.v2214_4 d L tab t1 k r g1 g2 hR hin h10) from rfl, a_v2179_4]
        exact acc_step d L fl tab (wL L).val (2 * t1.val + 1) (2 * k.val + 1) 1 _ hRB ⟨31, by decide⟩ ⟨0, by decide⟩ _ rfl _ hw_v2207_4 _ (k1_off108_form ..) _ _
      have a_v1675_5 : pair1_next.sl.v1675_5 d L tab t1 k r g1 g2 hR hin h10 = AccMath.accVec (rowF fl tab (wL L).val (2 * t1.val + 1) (2 * k.val + 1)) (offF fl (wL L).val (2 * t1.val + 1) (2 * k.val + 1)) 0 33 := by
        rw [show pair1_next.sl.v1675_5 d L tab t1 k r g1 g2 hR hin h10 = addf (pair1_next.sl.v2215_4 d L tab t1 k r g1 g2 hR hin h10) (pair1_next.sl.v1674_5 d L tab t1 k r g1 g2 hR hin h10) from rfl, a_v2215_4]
        exact acc_step d L fl tab (wL L).val (2 * t1.val + 1) (2 * k.val + 1) 1 _ hRB ⟨32, by decide⟩ ⟨0, by decide⟩ _ rfl _ hw_v1667_5 _ (k1_off93_form ..) _ _
      have a_v1711_5 : pair1_next.sl.v1711_5 d L tab t1 k r g1 g2 hR hin h10 = AccMath.accVec (rowF fl tab (wL L).val (2 * t1.val + 1) (2 * k.val + 1)) (offF fl (wL L).val (2 * t1.val + 1) (2 * k.val + 1)) 0 34 := by
        rw [show pair1_next.sl.v1711_5 d L tab t1 k r g1 g2 hR hin h10 = addf (pair1_next.sl.v1675_5 d L tab t1 k r g1 g2 hR hin h10) (pair1_next.sl.v1710_5 d L tab t1 k r g1 g2 hR hin h10) from rfl, a_v1675_5]
        exact acc_step d L fl tab (wL L).val (2 * t1.val + 1) (2 * k.val + 1) 1 _ hRB ⟨33, by decide⟩ ⟨0, by decide⟩ _ rfl _ hw_v1703_5 _ (k1_off94_form ..) _ _
      have a_v1747_5 : pair1_next.sl.v1747_5 d L tab t1 k r g1 g2 hR hin h10 = AccMath.accVec (rowF fl tab (wL L).val (2 * t1.val + 1) (2 * k.val + 1)) (offF fl (wL L).val (2 * t1.val + 1) (2 * k.val + 1)) 0 35 := by
        rw [show pair1_next.sl.v1747_5 d L tab t1 k r g1 g2 hR hin h10 = addf (pair1_next.sl.v1711_5 d L tab t1 k r g1 g2 hR hin h10) (pair1_next.sl.v1746_5 d L tab t1 k r g1 g2 hR hin h10) from rfl, a_v1711_5]
        exact acc_step d L fl tab (wL L).val (2 * t1.val + 1) (2 * k.val + 1) 1 _ hRB ⟨34, by decide⟩ ⟨0, by decide⟩ _ rfl _ hw_v1739_5 _ (k1_off95_form ..) _ _
      have a_v1783_5 : pair1_next.sl.v1783_5 d L tab t1 k r g1 g2 hR hin h10 = AccMath.accVec (rowF fl tab (wL L).val (2 * t1.val + 1) (2 * k.val + 1)) (offF fl (wL L).val (2 * t1.val + 1) (2 * k.val + 1)) 0 36 := by
        rw [show pair1_next.sl.v1783_5 d L tab t1 k r g1 g2 hR hin h10 = addf (pair1_next.sl.v1747_5 d L tab t1 k r g1 g2 hR hin h10) (pair1_next.sl.v1782_5 d L tab t1 k r g1 g2 hR hin h10) from rfl, a_v1747_5]
        exact acc_step d L fl tab (wL L).val (2 * t1.val + 1) (2 * k.val + 1) 1 _ hRB ⟨35, by decide⟩ ⟨0, by decide⟩ _ rfl _ hw_v1775_5 _ (k1_off96_form ..) _ _
      have a_v1819_5 : pair1_next.sl.v1819_5 d L tab t1 k r g1 g2 hR hin h10 = AccMath.accVec (rowF fl tab (wL L).val (2 * t1.val + 1) (2 * k.val + 1)) (offF fl (wL L).val (2 * t1.val + 1) (2 * k.val + 1)) 0 37 := by
        rw [show pair1_next.sl.v1819_5 d L tab t1 k r g1 g2 hR hin h10 = addf (pair1_next.sl.v1783_5 d L tab t1 k r g1 g2 hR hin h10) (pair1_next.sl.v1818_5 d L tab t1 k r g1 g2 hR hin h10) from rfl, a_v1783_5]
        exact acc_step d L fl tab (wL L).val (2 * t1.val + 1) (2 * k.val + 1) 1 _ hRB ⟨36, by decide⟩ ⟨0, by decide⟩ _ rfl _ hw_v1811_5 _ (k1_off97_form ..) _ _
      have a_v1855_5 : pair1_next.sl.v1855_5 d L tab t1 k r g1 g2 hR hin h10 = AccMath.accVec (rowF fl tab (wL L).val (2 * t1.val + 1) (2 * k.val + 1)) (offF fl (wL L).val (2 * t1.val + 1) (2 * k.val + 1)) 0 38 := by
        rw [show pair1_next.sl.v1855_5 d L tab t1 k r g1 g2 hR hin h10 = addf (pair1_next.sl.v1819_5 d L tab t1 k r g1 g2 hR hin h10) (pair1_next.sl.v1854_5 d L tab t1 k r g1 g2 hR hin h10) from rfl, a_v1819_5]
        exact acc_step d L fl tab (wL L).val (2 * t1.val + 1) (2 * k.val + 1) 1 _ hRB ⟨37, by decide⟩ ⟨0, by decide⟩ _ rfl _ hw_v1847_5 _ (k1_off98_form ..) _ _
      have a_v1891_5 : pair1_next.sl.v1891_5 d L tab t1 k r g1 g2 hR hin h10 = AccMath.accVec (rowF fl tab (wL L).val (2 * t1.val + 1) (2 * k.val + 1)) (offF fl (wL L).val (2 * t1.val + 1) (2 * k.val + 1)) 0 39 := by
        rw [show pair1_next.sl.v1891_5 d L tab t1 k r g1 g2 hR hin h10 = addf (pair1_next.sl.v1855_5 d L tab t1 k r g1 g2 hR hin h10) (pair1_next.sl.v1890_5 d L tab t1 k r g1 g2 hR hin h10) from rfl, a_v1855_5]
        exact acc_step d L fl tab (wL L).val (2 * t1.val + 1) (2 * k.val + 1) 1 _ hRB ⟨38, by decide⟩ ⟨0, by decide⟩ _ rfl _ hw_v1883_5 _ (k1_off99_form ..) _ _
      have a_v1927_5 : pair1_next.sl.v1927_5 d L tab t1 k r g1 g2 hR hin h10 = AccMath.accVec (rowF fl tab (wL L).val (2 * t1.val + 1) (2 * k.val + 1)) (offF fl (wL L).val (2 * t1.val + 1) (2 * k.val + 1)) 0 40 := by
        rw [show pair1_next.sl.v1927_5 d L tab t1 k r g1 g2 hR hin h10 = addf (pair1_next.sl.v1891_5 d L tab t1 k r g1 g2 hR hin h10) (pair1_next.sl.v1926_5 d L tab t1 k r g1 g2 hR hin h10) from rfl, a_v1891_5]
        exact acc_step d L fl tab (wL L).val (2 * t1.val + 1) (2 * k.val + 1) 1 _ hRB ⟨39, by decide⟩ ⟨0, by decide⟩ _ rfl _ hw_v1919_5 _ (k1_off100_form ..) _ _
      have a_v1963_5 : pair1_next.sl.v1963_5 d L tab t1 k r g1 g2 hR hin h10 = AccMath.accVec (rowF fl tab (wL L).val (2 * t1.val + 1) (2 * k.val + 1)) (offF fl (wL L).val (2 * t1.val + 1) (2 * k.val + 1)) 0 41 := by
        rw [show pair1_next.sl.v1963_5 d L tab t1 k r g1 g2 hR hin h10 = addf (pair1_next.sl.v1927_5 d L tab t1 k r g1 g2 hR hin h10) (pair1_next.sl.v1962_5 d L tab t1 k r g1 g2 hR hin h10) from rfl, a_v1927_5]
        exact acc_step d L fl tab (wL L).val (2 * t1.val + 1) (2 * k.val + 1) 1 _ hRB ⟨40, by decide⟩ ⟨0, by decide⟩ _ rfl _ hw_v1955_5 _ (k1_off101_form ..) _ _
      have a_v1999_5 : pair1_next.sl.v1999_5 d L tab t1 k r g1 g2 hR hin h10 = AccMath.accVec (rowF fl tab (wL L).val (2 * t1.val + 1) (2 * k.val + 1)) (offF fl (wL L).val (2 * t1.val + 1) (2 * k.val + 1)) 0 42 := by
        rw [show pair1_next.sl.v1999_5 d L tab t1 k r g1 g2 hR hin h10 = addf (pair1_next.sl.v1963_5 d L tab t1 k r g1 g2 hR hin h10) (pair1_next.sl.v1998_5 d L tab t1 k r g1 g2 hR hin h10) from rfl, a_v1963_5]
        exact acc_step d L fl tab (wL L).val (2 * t1.val + 1) (2 * k.val + 1) 1 _ hRB ⟨41, by decide⟩ ⟨0, by decide⟩ _ rfl _ hw_v1991_5 _ (k1_off102_form ..) _ _
      have a_v2035_5 : pair1_next.sl.v2035_5 d L tab t1 k r g1 g2 hR hin h10 = AccMath.accVec (rowF fl tab (wL L).val (2 * t1.val + 1) (2 * k.val + 1)) (offF fl (wL L).val (2 * t1.val + 1) (2 * k.val + 1)) 0 43 := by
        rw [show pair1_next.sl.v2035_5 d L tab t1 k r g1 g2 hR hin h10 = addf (pair1_next.sl.v1999_5 d L tab t1 k r g1 g2 hR hin h10) (pair1_next.sl.v2034_5 d L tab t1 k r g1 g2 hR hin h10) from rfl, a_v1999_5]
        exact acc_step d L fl tab (wL L).val (2 * t1.val + 1) (2 * k.val + 1) 1 _ hRB ⟨42, by decide⟩ ⟨0, by decide⟩ _ rfl _ hw_v2027_5 _ (k1_off103_form ..) _ _
      have a_v2071_5 : pair1_next.sl.v2071_5 d L tab t1 k r g1 g2 hR hin h10 = AccMath.accVec (rowF fl tab (wL L).val (2 * t1.val + 1) (2 * k.val + 1)) (offF fl (wL L).val (2 * t1.val + 1) (2 * k.val + 1)) 0 44 := by
        rw [show pair1_next.sl.v2071_5 d L tab t1 k r g1 g2 hR hin h10 = addf (pair1_next.sl.v2035_5 d L tab t1 k r g1 g2 hR hin h10) (pair1_next.sl.v2070_5 d L tab t1 k r g1 g2 hR hin h10) from rfl, a_v2035_5]
        exact acc_step d L fl tab (wL L).val (2 * t1.val + 1) (2 * k.val + 1) 1 _ hRB ⟨43, by decide⟩ ⟨0, by decide⟩ _ rfl _ hw_v2063_5 _ (k1_off104_form ..) _ _
      have a_v2107_5 : pair1_next.sl.v2107_5 d L tab t1 k r g1 g2 hR hin h10 = AccMath.accVec (rowF fl tab (wL L).val (2 * t1.val + 1) (2 * k.val + 1)) (offF fl (wL L).val (2 * t1.val + 1) (2 * k.val + 1)) 0 45 := by
        rw [show pair1_next.sl.v2107_5 d L tab t1 k r g1 g2 hR hin h10 = addf (pair1_next.sl.v2071_5 d L tab t1 k r g1 g2 hR hin h10) (pair1_next.sl.v2106_5 d L tab t1 k r g1 g2 hR hin h10) from rfl, a_v2071_5]
        exact acc_step d L fl tab (wL L).val (2 * t1.val + 1) (2 * k.val + 1) 1 _ hRB ⟨44, by decide⟩ ⟨0, by decide⟩ _ rfl _ hw_v2099_5 _ (k1_off105_form ..) _ _
      have a_v2143_5 : pair1_next.sl.v2143_5 d L tab t1 k r g1 g2 hR hin h10 = AccMath.accVec (rowF fl tab (wL L).val (2 * t1.val + 1) (2 * k.val + 1)) (offF fl (wL L).val (2 * t1.val + 1) (2 * k.val + 1)) 0 46 := by
        rw [show pair1_next.sl.v2143_5 d L tab t1 k r g1 g2 hR hin h10 = addf (pair1_next.sl.v2107_5 d L tab t1 k r g1 g2 hR hin h10) (pair1_next.sl.v2142_5 d L tab t1 k r g1 g2 hR hin h10) from rfl, a_v2107_5]
        exact acc_step d L fl tab (wL L).val (2 * t1.val + 1) (2 * k.val + 1) 1 _ hRB ⟨45, by decide⟩ ⟨0, by decide⟩ _ rfl _ hw_v2135_5 _ (k1_off106_form ..) _ _
      have a_v2179_5 : pair1_next.sl.v2179_5 d L tab t1 k r g1 g2 hR hin h10 = AccMath.accVec (rowF fl tab (wL L).val (2 * t1.val + 1) (2 * k.val + 1)) (offF fl (wL L).val (2 * t1.val + 1) (2 * k.val + 1)) 0 47 := by
        rw [show pair1_next.sl.v2179_5 d L tab t1 k r g1 g2 hR hin h10 = addf (pair1_next.sl.v2143_5 d L tab t1 k r g1 g2 hR hin h10) (pair1_next.sl.v2178_5 d L tab t1 k r g1 g2 hR hin h10) from rfl, a_v2143_5]
        exact acc_step d L fl tab (wL L).val (2 * t1.val + 1) (2 * k.val + 1) 1 _ hRB ⟨46, by decide⟩ ⟨0, by decide⟩ _ rfl _ hw_v2171_5 _ (k1_off107_form ..) _ _
      have a_v2215_5 : pair1_next.sl.v2215_5 d L tab t1 k r g1 g2 hR hin h10 = AccMath.accVec (rowF fl tab (wL L).val (2 * t1.val + 1) (2 * k.val + 1)) (offF fl (wL L).val (2 * t1.val + 1) (2 * k.val + 1)) 0 48 := by
        rw [show pair1_next.sl.v2215_5 d L tab t1 k r g1 g2 hR hin h10 = addf (pair1_next.sl.v2179_5 d L tab t1 k r g1 g2 hR hin h10) (pair1_next.sl.v2214_5 d L tab t1 k r g1 g2 hR hin h10) from rfl, a_v2179_5]
        exact acc_step d L fl tab (wL L).val (2 * t1.val + 1) (2 * k.val + 1) 1 _ hRB ⟨47, by decide⟩ ⟨0, by decide⟩ _ rfl _ hw_v2207_5 _ (k1_off108_form ..) _ _
      have a_v1580 : pair1_next.sl.v1580 d L tab t1 k r g1 g2 hR hin h10 = AccMath.accVec (rowF fl tab (wL L).val (2 * t1.val + 1) (2 * k.val + 1)) (offF fl (wL L).val (2 * t1.val + 1) (2 * k.val + 1)) 0 49 := by
        rw [show pair1_next.sl.v1580 d L tab t1 k r g1 g2 hR hin h10 = addf (pair1_next.sl.v2215_5 d L tab t1 k r g1 g2 hR hin h10) (pair1_next.sl.v1579 d L tab t1 k r g1 g2 hR hin h10) from rfl, a_v2215_5]
        exact acc_step d L fl tab (wL L).val (2 * t1.val + 1) (2 * k.val + 1) 1 _ hRB ⟨48, by decide⟩ ⟨0, by decide⟩ _ rfl _ hw_v1572 _ (k1_off110_form ..) _ _
      have a_v1614 : pair1_next.sl.v1614 d L tab t1 k r g1 g2 hR hin h10 = AccMath.accVec (rowF fl tab (wL L).val (2 * t1.val + 1) (2 * k.val + 1)) (offF fl (wL L).val (2 * t1.val + 1) (2 * k.val + 1)) 0 50 := by
        rw [show pair1_next.sl.v1614 d L tab t1 k r g1 g2 hR hin h10 = addf (pair1_next.sl.v1580 d L tab t1 k r g1 g2 hR hin h10) (pair1_next.sl.v1613 d L tab t1 k r g1 g2 hR hin h10) from rfl, a_v1580]
        exact acc_step d L fl tab (wL L).val (2 * t1.val + 1) (2 * k.val + 1) 1 _ hRB ⟨49, by decide⟩ ⟨0, by decide⟩ _ rfl _ hw_v1606 _ (k1_off111_form ..) _ _
      have a_v1561_B1 : pair1_next.sl.v1561 = AccMath.accVec (rowF fl tab (wL L).val (2 * t1.val + 1) (2 * k.val + 1)) (offF fl (wL L).val (2 * t1.val + 1) (2 * k.val + 1)) 1 0 := acc_zero fl tab (wL L).val (2 * t1.val + 1) (2 * k.val + 1) 1
      have a_v1683_3 : pair1_next.sl.v1683_3 d L tab t1 k r g1 g2 hR hin h10 = AccMath.accVec (rowF fl tab (wL L).val (2 * t1.val + 1) (2 * k.val + 1)) (offF fl (wL L).val (2 * t1.val + 1) (2 * k.val + 1)) 1 1 := by
        rw [show pair1_next.sl.v1683_3 d L tab t1 k r g1 g2 hR hin h10 = addf (pair1_next.sl.v1561) (pair1_next.sl.v1682_3 d L tab t1 k r g1 g2 hR hin h10) from rfl, a_v1561_B1]
        exact acc_step d L fl tab (wL L).val (2 * t1.val + 1) (2 * k.val + 1) 1 _ hRB ⟨0, by decide⟩ ⟨1, by decide⟩ _ rfl _ hw_v1667_3 _ (k1_off93_form ..) _ _
      have a_v1719_3 : pair1_next.sl.v1719_3 d L tab t1 k r g1 g2 hR hin h10 = AccMath.accVec (rowF fl tab (wL L).val (2 * t1.val + 1) (2 * k.val + 1)) (offF fl (wL L).val (2 * t1.val + 1) (2 * k.val + 1)) 1 2 := by
        rw [show pair1_next.sl.v1719_3 d L tab t1 k r g1 g2 hR hin h10 = addf (pair1_next.sl.v1683_3 d L tab t1 k r g1 g2 hR hin h10) (pair1_next.sl.v1718_3 d L tab t1 k r g1 g2 hR hin h10) from rfl, a_v1683_3]
        exact acc_step d L fl tab (wL L).val (2 * t1.val + 1) (2 * k.val + 1) 1 _ hRB ⟨1, by decide⟩ ⟨1, by decide⟩ _ rfl _ hw_v1703_3 _ (k1_off94_form ..) _ _
      have a_v1755_3 : pair1_next.sl.v1755_3 d L tab t1 k r g1 g2 hR hin h10 = AccMath.accVec (rowF fl tab (wL L).val (2 * t1.val + 1) (2 * k.val + 1)) (offF fl (wL L).val (2 * t1.val + 1) (2 * k.val + 1)) 1 3 := by
        rw [show pair1_next.sl.v1755_3 d L tab t1 k r g1 g2 hR hin h10 = addf (pair1_next.sl.v1719_3 d L tab t1 k r g1 g2 hR hin h10) (pair1_next.sl.v1754_3 d L tab t1 k r g1 g2 hR hin h10) from rfl, a_v1719_3]
        exact acc_step d L fl tab (wL L).val (2 * t1.val + 1) (2 * k.val + 1) 1 _ hRB ⟨2, by decide⟩ ⟨1, by decide⟩ _ rfl _ hw_v1739_3 _ (k1_off95_form ..) _ _
      have a_v1791_3 : pair1_next.sl.v1791_3 d L tab t1 k r g1 g2 hR hin h10 = AccMath.accVec (rowF fl tab (wL L).val (2 * t1.val + 1) (2 * k.val + 1)) (offF fl (wL L).val (2 * t1.val + 1) (2 * k.val + 1)) 1 4 := by
        rw [show pair1_next.sl.v1791_3 d L tab t1 k r g1 g2 hR hin h10 = addf (pair1_next.sl.v1755_3 d L tab t1 k r g1 g2 hR hin h10) (pair1_next.sl.v1790_3 d L tab t1 k r g1 g2 hR hin h10) from rfl, a_v1755_3]
        exact acc_step d L fl tab (wL L).val (2 * t1.val + 1) (2 * k.val + 1) 1 _ hRB ⟨3, by decide⟩ ⟨1, by decide⟩ _ rfl _ hw_v1775_3 _ (k1_off96_form ..) _ _
      have a_v1827_3 : pair1_next.sl.v1827_3 d L tab t1 k r g1 g2 hR hin h10 = AccMath.accVec (rowF fl tab (wL L).val (2 * t1.val + 1) (2 * k.val + 1)) (offF fl (wL L).val (2 * t1.val + 1) (2 * k.val + 1)) 1 5 := by
        rw [show pair1_next.sl.v1827_3 d L tab t1 k r g1 g2 hR hin h10 = addf (pair1_next.sl.v1791_3 d L tab t1 k r g1 g2 hR hin h10) (pair1_next.sl.v1826_3 d L tab t1 k r g1 g2 hR hin h10) from rfl, a_v1791_3]
        exact acc_step d L fl tab (wL L).val (2 * t1.val + 1) (2 * k.val + 1) 1 _ hRB ⟨4, by decide⟩ ⟨1, by decide⟩ _ rfl _ hw_v1811_3 _ (k1_off97_form ..) _ _
      have a_v1863_3 : pair1_next.sl.v1863_3 d L tab t1 k r g1 g2 hR hin h10 = AccMath.accVec (rowF fl tab (wL L).val (2 * t1.val + 1) (2 * k.val + 1)) (offF fl (wL L).val (2 * t1.val + 1) (2 * k.val + 1)) 1 6 := by
        rw [show pair1_next.sl.v1863_3 d L tab t1 k r g1 g2 hR hin h10 = addf (pair1_next.sl.v1827_3 d L tab t1 k r g1 g2 hR hin h10) (pair1_next.sl.v1862_3 d L tab t1 k r g1 g2 hR hin h10) from rfl, a_v1827_3]
        exact acc_step d L fl tab (wL L).val (2 * t1.val + 1) (2 * k.val + 1) 1 _ hRB ⟨5, by decide⟩ ⟨1, by decide⟩ _ rfl _ hw_v1847_3 _ (k1_off98_form ..) _ _
      have a_v1899_3 : pair1_next.sl.v1899_3 d L tab t1 k r g1 g2 hR hin h10 = AccMath.accVec (rowF fl tab (wL L).val (2 * t1.val + 1) (2 * k.val + 1)) (offF fl (wL L).val (2 * t1.val + 1) (2 * k.val + 1)) 1 7 := by
        rw [show pair1_next.sl.v1899_3 d L tab t1 k r g1 g2 hR hin h10 = addf (pair1_next.sl.v1863_3 d L tab t1 k r g1 g2 hR hin h10) (pair1_next.sl.v1898_3 d L tab t1 k r g1 g2 hR hin h10) from rfl, a_v1863_3]
        exact acc_step d L fl tab (wL L).val (2 * t1.val + 1) (2 * k.val + 1) 1 _ hRB ⟨6, by decide⟩ ⟨1, by decide⟩ _ rfl _ hw_v1883_3 _ (k1_off99_form ..) _ _
      have a_v1935_3 : pair1_next.sl.v1935_3 d L tab t1 k r g1 g2 hR hin h10 = AccMath.accVec (rowF fl tab (wL L).val (2 * t1.val + 1) (2 * k.val + 1)) (offF fl (wL L).val (2 * t1.val + 1) (2 * k.val + 1)) 1 8 := by
        rw [show pair1_next.sl.v1935_3 d L tab t1 k r g1 g2 hR hin h10 = addf (pair1_next.sl.v1899_3 d L tab t1 k r g1 g2 hR hin h10) (pair1_next.sl.v1934_3 d L tab t1 k r g1 g2 hR hin h10) from rfl, a_v1899_3]
        exact acc_step d L fl tab (wL L).val (2 * t1.val + 1) (2 * k.val + 1) 1 _ hRB ⟨7, by decide⟩ ⟨1, by decide⟩ _ rfl _ hw_v1919_3 _ (k1_off100_form ..) _ _
      have a_v1971_3 : pair1_next.sl.v1971_3 d L tab t1 k r g1 g2 hR hin h10 = AccMath.accVec (rowF fl tab (wL L).val (2 * t1.val + 1) (2 * k.val + 1)) (offF fl (wL L).val (2 * t1.val + 1) (2 * k.val + 1)) 1 9 := by
        rw [show pair1_next.sl.v1971_3 d L tab t1 k r g1 g2 hR hin h10 = addf (pair1_next.sl.v1935_3 d L tab t1 k r g1 g2 hR hin h10) (pair1_next.sl.v1970_3 d L tab t1 k r g1 g2 hR hin h10) from rfl, a_v1935_3]
        exact acc_step d L fl tab (wL L).val (2 * t1.val + 1) (2 * k.val + 1) 1 _ hRB ⟨8, by decide⟩ ⟨1, by decide⟩ _ rfl _ hw_v1955_3 _ (k1_off101_form ..) _ _
      have a_v2007_3 : pair1_next.sl.v2007_3 d L tab t1 k r g1 g2 hR hin h10 = AccMath.accVec (rowF fl tab (wL L).val (2 * t1.val + 1) (2 * k.val + 1)) (offF fl (wL L).val (2 * t1.val + 1) (2 * k.val + 1)) 1 10 := by
        rw [show pair1_next.sl.v2007_3 d L tab t1 k r g1 g2 hR hin h10 = addf (pair1_next.sl.v1971_3 d L tab t1 k r g1 g2 hR hin h10) (pair1_next.sl.v2006_3 d L tab t1 k r g1 g2 hR hin h10) from rfl, a_v1971_3]
        exact acc_step d L fl tab (wL L).val (2 * t1.val + 1) (2 * k.val + 1) 1 _ hRB ⟨9, by decide⟩ ⟨1, by decide⟩ _ rfl _ hw_v1991_3 _ (k1_off102_form ..) _ _
      have a_v2043_3 : pair1_next.sl.v2043_3 d L tab t1 k r g1 g2 hR hin h10 = AccMath.accVec (rowF fl tab (wL L).val (2 * t1.val + 1) (2 * k.val + 1)) (offF fl (wL L).val (2 * t1.val + 1) (2 * k.val + 1)) 1 11 := by
        rw [show pair1_next.sl.v2043_3 d L tab t1 k r g1 g2 hR hin h10 = addf (pair1_next.sl.v2007_3 d L tab t1 k r g1 g2 hR hin h10) (pair1_next.sl.v2042_3 d L tab t1 k r g1 g2 hR hin h10) from rfl, a_v2007_3]
        exact acc_step d L fl tab (wL L).val (2 * t1.val + 1) (2 * k.val + 1) 1 _ hRB ⟨10, by decide⟩ ⟨1, by decide⟩ _ rfl _ hw_v2027_3 _ (k1_off103_form ..) _ _
      have a_v2079_3 : pair1_next.sl.v2079_3 d L tab t1 k r g1 g2 hR hin h10 = AccMath.accVec (rowF fl tab (wL L).val (2 * t1.val + 1) (2 * k.val + 1)) (offF fl (wL L).val (2 * t1.val + 1) (2 * k.val + 1)) 1 12 := by
        rw [show pair1_next.sl.v2079_3 d L tab t1 k r g1 g2 hR hin h10 = addf (pair1_next.sl.v2043_3 d L tab t1 k r g1 g2 hR hin h10) (pair1_next.sl.v2078_3 d L tab t1 k r g1 g2 hR hin h10) from rfl, a_v2043_3]
        exact acc_step d L fl tab (wL L).val (2 * t1.val + 1) (2 * k.val + 1) 1 _ hRB ⟨11, by decide⟩ ⟨1, by decide⟩ _ rfl _ hw_v2063_3 _ (k1_off104_form ..) _ _
      have a_v2115_3 : pair1_next.sl.v2115_3 d L tab t1 k r g1 g2 hR hin h10 = AccMath.accVec (rowF fl tab (wL L).val (2 * t1.val + 1) (2 * k.val + 1)) (offF fl (wL L).val (2 * t1.val + 1) (2 * k.val + 1)) 1 13 := by
        rw [show pair1_next.sl.v2115_3 d L tab t1 k r g1 g2 hR hin h10 = addf (pair1_next.sl.v2079_3 d L tab t1 k r g1 g2 hR hin h10) (pair1_next.sl.v2114_3 d L tab t1 k r g1 g2 hR hin h10) from rfl, a_v2079_3]
        exact acc_step d L fl tab (wL L).val (2 * t1.val + 1) (2 * k.val + 1) 1 _ hRB ⟨12, by decide⟩ ⟨1, by decide⟩ _ rfl _ hw_v2099_3 _ (k1_off105_form ..) _ _
      have a_v2151_3 : pair1_next.sl.v2151_3 d L tab t1 k r g1 g2 hR hin h10 = AccMath.accVec (rowF fl tab (wL L).val (2 * t1.val + 1) (2 * k.val + 1)) (offF fl (wL L).val (2 * t1.val + 1) (2 * k.val + 1)) 1 14 := by
        rw [show pair1_next.sl.v2151_3 d L tab t1 k r g1 g2 hR hin h10 = addf (pair1_next.sl.v2115_3 d L tab t1 k r g1 g2 hR hin h10) (pair1_next.sl.v2150_3 d L tab t1 k r g1 g2 hR hin h10) from rfl, a_v2115_3]
        exact acc_step d L fl tab (wL L).val (2 * t1.val + 1) (2 * k.val + 1) 1 _ hRB ⟨13, by decide⟩ ⟨1, by decide⟩ _ rfl _ hw_v2135_3 _ (k1_off106_form ..) _ _
      have a_v2187_3 : pair1_next.sl.v2187_3 d L tab t1 k r g1 g2 hR hin h10 = AccMath.accVec (rowF fl tab (wL L).val (2 * t1.val + 1) (2 * k.val + 1)) (offF fl (wL L).val (2 * t1.val + 1) (2 * k.val + 1)) 1 15 := by
        rw [show pair1_next.sl.v2187_3 d L tab t1 k r g1 g2 hR hin h10 = addf (pair1_next.sl.v2151_3 d L tab t1 k r g1 g2 hR hin h10) (pair1_next.sl.v2186_3 d L tab t1 k r g1 g2 hR hin h10) from rfl, a_v2151_3]
        exact acc_step d L fl tab (wL L).val (2 * t1.val + 1) (2 * k.val + 1) 1 _ hRB ⟨14, by decide⟩ ⟨1, by decide⟩ _ rfl _ hw_v2171_3 _ (k1_off107_form ..) _ _
      have a_v2223_3 : pair1_next.sl.v2223_3 d L tab t1 k r g1 g2 hR hin h10 = AccMath.accVec (rowF fl tab (wL L).val (2 * t1.val + 1) (2 * k.val + 1)) (offF fl (wL L).val (2 * t1.val + 1) (2 * k.val + 1)) 1 16 := by
        rw [show pair1_next.sl.v2223_3 d L tab t1 k r g1 g2 hR hin h10 = addf (pair1_next.sl.v2187_3 d L tab t1 k r g1 g2 hR hin h10) (pair1_next.sl.v2222_3 d L tab t1 k r g1 g2 hR hin h10) from rfl, a_v2187_3]
        exact acc_step d L fl tab (wL L).val (2 * t1.val + 1) (2 * k.val + 1) 1 _ hRB ⟨15, by decide⟩ ⟨1, by decide⟩ _ rfl _ hw_v2207_3 _ (k1_off108_form ..) _ _
      have a_v1683_4 : pair1_next.sl.v1683_4 d L tab t1 k r g1 g2 hR hin h10 = AccMath.accVec (rowF fl tab (wL L).val (2 * t1.val + 1) (2 * k.val + 1)) (offF fl (wL L).val (2 * t1.val + 1) (2 * k.val + 1)) 1 17 := by
        rw [show pair1_next.sl.v1683_4 d L tab t1 k r g1 g2 hR hin h10 = addf (pair1_next.sl.v2223_3 d L tab t1 k r g1 g2 hR hin h10) (pair1_next.sl.v1682_4 d L tab t1 k r g1 g2 hR hin h10) from rfl, a_v2223_3]
        exact acc_step d L fl tab (wL L).val (2 * t1.val + 1) (2 * k.val + 1) 1 _ hRB ⟨16, by decide⟩ ⟨1, by decide⟩ _ rfl _ hw_v1667_4 _ (k1_off93_form ..) _ _
      have a_v1719_4 : pair1_next.sl.v1719_4 d L tab t1 k r g1 g2 hR hin h10 = AccMath.accVec (rowF fl tab (wL L).val (2 * t1.val + 1) (2 * k.val + 1)) (offF fl (wL L).val (2 * t1.val + 1) (2 * k.val + 1)) 1 18 := by
        rw [show pair1_next.sl.v1719_4 d L tab t1 k r g1 g2 hR hin h10 = addf (pair1_next.sl.v1683_4 d L tab t1 k r g1 g2 hR hin h10) (pair1_next.sl.v1718_4 d L tab t1 k r g1 g2 hR hin h10) from rfl, a_v1683_4]
        exact acc_step d L fl tab (wL L).val (2 * t1.val + 1) (2 * k.val + 1) 1 _ hRB ⟨17, by decide⟩ ⟨1, by decide⟩ _ rfl _ hw_v1703_4 _ (k1_off94_form ..) _ _
      have a_v1755_4 : pair1_next.sl.v1755_4 d L tab t1 k r g1 g2 hR hin h10 = AccMath.accVec (rowF fl tab (wL L).val (2 * t1.val + 1) (2 * k.val + 1)) (offF fl (wL L).val (2 * t1.val + 1) (2 * k.val + 1)) 1 19 := by
        rw [show pair1_next.sl.v1755_4 d L tab t1 k r g1 g2 hR hin h10 = addf (pair1_next.sl.v1719_4 d L tab t1 k r g1 g2 hR hin h10) (pair1_next.sl.v1754_4 d L tab t1 k r g1 g2 hR hin h10) from rfl, a_v1719_4]
        exact acc_step d L fl tab (wL L).val (2 * t1.val + 1) (2 * k.val + 1) 1 _ hRB ⟨18, by decide⟩ ⟨1, by decide⟩ _ rfl _ hw_v1739_4 _ (k1_off95_form ..) _ _
      have a_v1791_4 : pair1_next.sl.v1791_4 d L tab t1 k r g1 g2 hR hin h10 = AccMath.accVec (rowF fl tab (wL L).val (2 * t1.val + 1) (2 * k.val + 1)) (offF fl (wL L).val (2 * t1.val + 1) (2 * k.val + 1)) 1 20 := by
        rw [show pair1_next.sl.v1791_4 d L tab t1 k r g1 g2 hR hin h10 = addf (pair1_next.sl.v1755_4 d L tab t1 k r g1 g2 hR hin h10) (pair1_next.sl.v1790_4 d L tab t1 k r g1 g2 hR hin h10) from rfl, a_v1755_4]
        exact acc_step d L fl tab (wL L).val (2 * t1.val + 1) (2 * k.val + 1) 1 _ hRB ⟨19, by decide⟩ ⟨1, by decide⟩ _ rfl _ hw_v1775_4 _ (k1_off96_form ..) _ _
      have a_v1827_4 : pair1_next.sl.v1827_4 d L tab t1 k r g1 g2 hR hin h10 = AccMath.accVec (rowF fl tab (wL L).val (2 * t1.val + 1) (2 * k.val + 1)) (offF fl (wL L).val (2 * t1.val + 1) (2 * k.val + 1)) 1 21 := by
        rw [show pair1_next.sl.v1827_4 d L tab t1 k r g1 g2 hR hin h10 = addf (pair1_next.sl.v1791_4 d L tab t1 k r g1 g2 hR hin h10) (pair1_next.sl.v1826_4 d L tab t1 k r g1 g2 hR hin h10) from rfl, a_v1791_4]
        exact acc_step d L fl tab (wL L).val (2 * t1.val + 1) (2 * k.val + 1) 1 _ hRB ⟨20, by decide⟩ ⟨1, by decide⟩ _ rfl _ hw_v1811_4 _ (k1_off97_form ..) _ _
      have a_v1863_4 : pair1_next.sl.v1863_4 d L tab t1 k r g1 g2 hR hin h10 = AccMath.accVec (rowF fl tab (wL L).val (2 * t1.val + 1) (2 * k.val + 1)) (offF fl (wL L).val (2 * t1.val + 1) (2 * k.val + 1)) 1 22 := by
        rw [show pair1_next.sl.v1863_4 d L tab t1 k r g1 g2 hR hin h10 = addf (pair1_next.sl.v1827_4 d L tab t1 k r g1 g2 hR hin h10) (pair1_next.sl.v1862_4 d L tab t1 k r g1 g2 hR hin h10) from rfl, a_v1827_4]
        exact acc_step d L fl tab (wL L).val (2 * t1.val + 1) (2 * k.val + 1) 1 _ hRB ⟨21, by decide⟩ ⟨1, by decide⟩ _ rfl _ hw_v1847_4 _ (k1_off98_form ..) _ _
      have a_v1899_4 : pair1_next.sl.v1899_4 d L tab t1 k r g1 g2 hR hin h10 = AccMath.accVec (rowF fl tab (wL L).val (2 * t1.val + 1) (2 * k.val + 1)) (offF fl (wL L).val (2 * t1.val + 1) (2 * k.val + 1)) 1 23 := by
        rw [show pair1_next.sl.v1899_4 d L tab t1 k r g1 g2 hR hin h10 = addf (pair1_next.sl.v1863_4 d L tab t1 k r g1 g2 hR hin h10) (pair1_next.sl.v1898_4 d L tab t1 k r g1 g2 hR hin h10) from rfl, a_v1863_4]
        exact acc_step d L fl tab (wL L).val (2 * t1.val + 1) (2 * k.val + 1) 1 _ hRB ⟨22, by decide⟩ ⟨1, by decide⟩ _ rfl _ hw_v1883_4 _ (k1_off99_form ..) _ _
      have a_v1935_4 : pair1_next.sl.v1935_4 d L tab t1 k r g1 g2 hR hin h10 = AccMath.accVec (rowF fl tab (wL L).val (2 * t1.val + 1) (2 * k.val + 1)) (offF fl (wL L).val (2 * t1.val + 1) (2 * k.val + 1)) 1 24 := by
        rw [show pair1_next.sl.v1935_4 d L tab t1 k r g1 g2 hR hin h10 = addf (pair1_next.sl.v1899_4 d L tab t1 k r g1 g2 hR hin h10) (pair1_next.sl.v1934_4 d L tab t1 k r g1 g2 hR hin h10) from rfl, a_v1899_4]
        exact acc_step d L fl tab (wL L).val (2 * t1.val + 1) (2 * k.val + 1) 1 _ hRB ⟨23, by decide⟩ ⟨1, by decide⟩ _ rfl _ hw_v1919_4 _ (k1_off100_form ..) _ _
      have a_v1971_4 : pair1_next.sl.v1971_4 d L tab t1 k r g1 g2 hR hin h10 = AccMath.accVec (rowF fl tab (wL L).val (2 * t1.val + 1) (2 * k.val + 1)) (offF fl (wL L).val (2 * t1.val + 1) (2 * k.val + 1)) 1 25 := by
        rw [show pair1_next.sl.v1971_4 d L tab t1 k r g1 g2 hR hin h10 = addf (pair1_next.sl.v1935_4 d L tab t1 k r g1 g2 hR hin h10) (pair1_next.sl.v1970_4 d L tab t1 k r g1 g2 hR hin h10) from rfl, a_v1935_4]
        exact acc_step d L fl tab (wL L).val (2 * t1.val + 1) (2 * k.val + 1) 1 _ hRB ⟨24, by decide⟩ ⟨1, by decide⟩ _ rfl _ hw_v1955_4 _ (k1_off101_form ..) _ _
      have a_v2007_4 : pair1_next.sl.v2007_4 d L tab t1 k r g1 g2 hR hin h10 = AccMath.accVec (rowF fl tab (wL L).val (2 * t1.val + 1) (2 * k.val + 1)) (offF fl (wL L).val (2 * t1.val + 1) (2 * k.val + 1)) 1 26 := by
        rw [show pair1_next.sl.v2007_4 d L tab t1 k r g1 g2 hR hin h10 = addf (pair1_next.sl.v1971_4 d L tab t1 k r g1 g2 hR hin h10) (pair1_next.sl.v2006_4 d L tab t1 k r g1 g2 hR hin h10) from rfl, a_v1971_4]
        exact acc_step d L fl tab (wL L).val (2 * t1.val + 1) (2 * k.val + 1) 1 _ hRB ⟨25, by decide⟩ ⟨1, by decide⟩ _ rfl _ hw_v1991_4 _ (k1_off102_form ..) _ _
      have a_v2043_4 : pair1_next.sl.v2043_4 d L tab t1 k r g1 g2 hR hin h10 = AccMath.accVec (rowF fl tab (wL L).val (2 * t1.val + 1) (2 * k.val + 1)) (offF fl (wL L).val (2 * t1.val + 1) (2 * k.val + 1)) 1 27 := by
        rw [show pair1_next.sl.v2043_4 d L tab t1 k r g1 g2 hR hin h10 = addf (pair1_next.sl.v2007_4 d L tab t1 k r g1 g2 hR hin h10) (pair1_next.sl.v2042_4 d L tab t1 k r g1 g2 hR hin h10) from rfl, a_v2007_4]
        exact acc_step d L fl tab (wL L).val (2 * t1.val + 1) (2 * k.val + 1) 1 _ hRB ⟨26, by decide⟩ ⟨1, by decide⟩ _ rfl _ hw_v2027_4 _ (k1_off103_form ..) _ _
      have a_v2079_4 : pair1_next.sl.v2079_4 d L tab t1 k r g1 g2 hR hin h10 = AccMath.accVec (rowF fl tab (wL L).val (2 * t1.val + 1) (2 * k.val + 1)) (offF fl (wL L).val (2 * t1.val + 1) (2 * k.val + 1)) 1 28 := by
        rw [show pair1_next.sl.v2079_4 d L tab t1 k r g1 g2 hR hin h10 = addf (pair1_next.sl.v2043_4 d L tab t1 k r g1 g2 hR hin h10) (pair1_next.sl.v2078_4 d L tab t1 k r g1 g2 hR hin h10) from rfl, a_v2043_4]
        exact acc_step d L fl tab (wL L).val (2 * t1.val + 1) (2 * k.val + 1) 1 _ hRB ⟨27, by decide⟩ ⟨1, by decide⟩ _ rfl _ hw_v2063_4 _ (k1_off104_form ..) _ _
      have a_v2115_4 : pair1_next.sl.v2115_4 d L tab t1 k r g1 g2 hR hin h10 = AccMath.accVec (rowF fl tab (wL L).val (2 * t1.val + 1) (2 * k.val + 1)) (offF fl (wL L).val (2 * t1.val + 1) (2 * k.val + 1)) 1 29 := by
        rw [show pair1_next.sl.v2115_4 d L tab t1 k r g1 g2 hR hin h10 = addf (pair1_next.sl.v2079_4 d L tab t1 k r g1 g2 hR hin h10) (pair1_next.sl.v2114_4 d L tab t1 k r g1 g2 hR hin h10) from rfl, a_v2079_4]
        exact acc_step d L fl tab (wL L).val (2 * t1.val + 1) (2 * k.val + 1) 1 _ hRB ⟨28, by decide⟩ ⟨1, by decide⟩ _ rfl _ hw_v2099_4 _ (k1_off105_form ..) _ _
      have a_v2151_4 : pair1_next.sl.v2151_4 d L tab t1 k r g1 g2 hR hin h10 = AccMath.accVec (rowF fl tab (wL L).val (2 * t1.val + 1) (2 * k.val + 1)) (offF fl (wL L).val (2 * t1.val + 1) (2 * k.val + 1)) 1 30 := by
        rw [show pair1_next.sl.v2151_4 d L tab t1 k r g1 g2 hR hin h10 = addf (pair1_next.sl.v2115_4 d L tab t1 k r g1 g2 hR hin h10) (pair1_next.sl.v2150_4 d L tab t1 k r g1 g2 hR hin h10) from rfl, a_v2115_4]
        exact acc_step d L fl tab (wL L).val (2 * t1.val + 1) (2 * k.val + 1) 1 _ hRB ⟨29, by decide⟩ ⟨1, by decide⟩ _ rfl _ hw_v2135_4 _ (k1_off106_form ..) _ _
      have a_v2187_4 : pair1_next.sl.v2187_4 d L tab t1 k r g1 g2 hR hin h10 = AccMath.accVec (rowF fl tab (wL L).val (2 * t1.val + 1) (2 * k.val + 1)) (offF fl (wL L).val (2 * t1.val + 1) (2 * k.val + 1)) 1 31 := by
        rw [show pair1_next.sl.v2187_4 d L tab t1 k r g1 g2 hR hin h10 = addf (pair1_next.sl.v2151_4 d L tab t1 k r g1 g2 hR hin h10) (pair1_next.sl.v2186_4 d L tab t1 k r g1 g2 hR hin h10) from rfl, a_v2151_4]
        exact acc_step d L fl tab (wL L).val (2 * t1.val + 1) (2 * k.val + 1) 1 _ hRB ⟨30, by decide⟩ ⟨1, by decide⟩ _ rfl _ hw_v2171_4 _ (k1_off107_form ..) _ _
      have a_v2223_4 : pair1_next.sl.v2223_4 d L tab t1 k r g1 g2 hR hin h10 = AccMath.accVec (rowF fl tab (wL L).val (2 * t1.val + 1) (2 * k.val + 1)) (offF fl (wL L).val (2 * t1.val + 1) (2 * k.val + 1)) 1 32 := by
        rw [show pair1_next.sl.v2223_4 d L tab t1 k r g1 g2 hR hin h10 = addf (pair1_next.sl.v2187_4 d L tab t1 k r g1 g2 hR hin h10) (pair1_next.sl.v2222_4 d L tab t1 k r g1 g2 hR hin h10) from rfl, a_v2187_4]
        exact acc_step d L fl tab (wL L).val (2 * t1.val + 1) (2 * k.val + 1) 1 _ hRB ⟨31, by decide⟩ ⟨1, by decide⟩ _ rfl _ hw_v2207_4 _ (k1_off108_form ..) _ _
      have a_v1683_5 : pair1_next.sl.v1683_5 d L tab t1 k r g1 g2 hR hin h10 = AccMath.accVec (rowF fl tab (wL L).val (2 * t1.val + 1) (2 * k.val + 1)) (offF fl (wL L).val (2 * t1.val + 1) (2 * k.val + 1)) 1 33 := by
        rw [show pair1_next.sl.v1683_5 d L tab t1 k r g1 g2 hR hin h10 = addf (pair1_next.sl.v2223_4 d L tab t1 k r g1 g2 hR hin h10) (pair1_next.sl.v1682_5 d L tab t1 k r g1 g2 hR hin h10) from rfl, a_v2223_4]
        exact acc_step d L fl tab (wL L).val (2 * t1.val + 1) (2 * k.val + 1) 1 _ hRB ⟨32, by decide⟩ ⟨1, by decide⟩ _ rfl _ hw_v1667_5 _ (k1_off93_form ..) _ _
      have a_v1719_5 : pair1_next.sl.v1719_5 d L tab t1 k r g1 g2 hR hin h10 = AccMath.accVec (rowF fl tab (wL L).val (2 * t1.val + 1) (2 * k.val + 1)) (offF fl (wL L).val (2 * t1.val + 1) (2 * k.val + 1)) 1 34 := by
        rw [show pair1_next.sl.v1719_5 d L tab t1 k r g1 g2 hR hin h10 = addf (pair1_next.sl.v1683_5 d L tab t1 k r g1 g2 hR hin h10) (pair1_next.sl.v1718_5 d L tab t1 k r g1 g2 hR hin h10) from rfl, a_v1683_5]
        exact acc_step d L fl tab (wL L).val (2 * t1.val + 1) (2 * k.val + 1) 1 _ hRB ⟨33, by decide⟩ ⟨1, by decide⟩ _ rfl _ hw_v1703_5 _ (k1_off94_form ..) _ _
      have a_v1755_5 : pair1_next.sl.v1755_5 d L tab t1 k r g1 g2 hR hin h10 = AccMath.accVec (rowF fl tab (wL L).val (2 * t1.val + 1) (2 * k.val + 1)) (offF fl (wL L).val (2 * t1.val + 1) (2 * k.val + 1)) 1 35 := by
        rw [show pair1_next.sl.v1755_5 d L tab t1 k r g1 g2 hR hin h10 = addf (pair1_next.sl.v1719_5 d L tab t1 k r g1 g2 hR hin h10) (pair1_next.sl.v1754_5 d L tab t1 k r g1 g2 hR hin h10) from rfl, a_v1719_5]
        exact acc_step d L fl tab (wL L).val (2 * t1.val + 1) (2 * k.val + 1) 1 _ hRB ⟨34, by decide⟩ ⟨1, by decide⟩ _ rfl _ hw_v1739_5 _ (k1_off95_form ..) _ _
      have a_v1791_5 : pair1_next.sl.v1791_5 d L tab t1 k r g1 g2 hR hin h10 = AccMath.accVec (rowF fl tab (wL L).val (2 * t1.val + 1) (2 * k.val + 1)) (offF fl (wL L).val (2 * t1.val + 1) (2 * k.val + 1)) 1 36 := by
        rw [show pair1_next.sl.v1791_5 d L tab t1 k r g1 g2 hR hin h10 = addf (pair1_next.sl.v1755_5 d L tab t1 k r g1 g2 hR hin h10) (pair1_next.sl.v1790_5 d L tab t1 k r g1 g2 hR hin h10) from rfl, a_v1755_5]
        exact acc_step d L fl tab (wL L).val (2 * t1.val + 1) (2 * k.val + 1) 1 _ hRB ⟨35, by decide⟩ ⟨1, by decide⟩ _ rfl _ hw_v1775_5 _ (k1_off96_form ..) _ _
      have a_v1827_5 : pair1_next.sl.v1827_5 d L tab t1 k r g1 g2 hR hin h10 = AccMath.accVec (rowF fl tab (wL L).val (2 * t1.val + 1) (2 * k.val + 1)) (offF fl (wL L).val (2 * t1.val + 1) (2 * k.val + 1)) 1 37 := by
        rw [show pair1_next.sl.v1827_5 d L tab t1 k r g1 g2 hR hin h10 = addf (pair1_next.sl.v1791_5 d L tab t1 k r g1 g2 hR hin h10) (pair1_next.sl.v1826_5 d L tab t1 k r g1 g2 hR hin h10) from rfl, a_v1791_5]
        exact acc_step d L fl tab (wL L).val (2 * t1.val + 1) (2 * k.val + 1) 1 _ hRB ⟨36, by decide⟩ ⟨1, by decide⟩ _ rfl _ hw_v1811_5 _ (k1_off97_form ..) _ _
      have a_v1863_5 : pair1_next.sl.v1863_5 d L tab t1 k r g1 g2 hR hin h10 = AccMath.accVec (rowF fl tab (wL L).val (2 * t1.val + 1) (2 * k.val + 1)) (offF fl (wL L).val (2 * t1.val + 1) (2 * k.val + 1)) 1 38 := by
        rw [show pair1_next.sl.v1863_5 d L tab t1 k r g1 g2 hR hin h10 = addf (pair1_next.sl.v1827_5 d L tab t1 k r g1 g2 hR hin h10) (pair1_next.sl.v1862_5 d L tab t1 k r g1 g2 hR hin h10) from rfl, a_v1827_5]
        exact acc_step d L fl tab (wL L).val (2 * t1.val + 1) (2 * k.val + 1) 1 _ hRB ⟨37, by decide⟩ ⟨1, by decide⟩ _ rfl _ hw_v1847_5 _ (k1_off98_form ..) _ _
      have a_v1899_5 : pair1_next.sl.v1899_5 d L tab t1 k r g1 g2 hR hin h10 = AccMath.accVec (rowF fl tab (wL L).val (2 * t1.val + 1) (2 * k.val + 1)) (offF fl (wL L).val (2 * t1.val + 1) (2 * k.val + 1)) 1 39 := by
        rw [show pair1_next.sl.v1899_5 d L tab t1 k r g1 g2 hR hin h10 = addf (pair1_next.sl.v1863_5 d L tab t1 k r g1 g2 hR hin h10) (pair1_next.sl.v1898_5 d L tab t1 k r g1 g2 hR hin h10) from rfl, a_v1863_5]
        exact acc_step d L fl tab (wL L).val (2 * t1.val + 1) (2 * k.val + 1) 1 _ hRB ⟨38, by decide⟩ ⟨1, by decide⟩ _ rfl _ hw_v1883_5 _ (k1_off99_form ..) _ _
      have a_v1935_5 : pair1_next.sl.v1935_5 d L tab t1 k r g1 g2 hR hin h10 = AccMath.accVec (rowF fl tab (wL L).val (2 * t1.val + 1) (2 * k.val + 1)) (offF fl (wL L).val (2 * t1.val + 1) (2 * k.val + 1)) 1 40 := by
        rw [show pair1_next.sl.v1935_5 d L tab t1 k r g1 g2 hR hin h10 = addf (pair1_next.sl.v1899_5 d L tab t1 k r g1 g2 hR hin h10) (pair1_next.sl.v1934_5 d L tab t1 k r g1 g2 hR hin h10) from rfl, a_v1899_5]
        exact acc_step d L fl tab (wL L).val (2 * t1.val + 1) (2 * k.val + 1) 1 _ hRB ⟨39, by decide⟩ ⟨1, by decide⟩ _ rfl _ hw_v1919_5 _ (k1_off100_form ..) _ _
      have a_v1971_5 : pair1_next.sl.v1971_5 d L tab t1 k r g1 g2 hR hin h10 = AccMath.accVec (rowF fl tab (wL L).val (2 * t1.val + 1) (2 * k.val + 1)) (offF fl (wL L).val (2 * t1.val + 1) (2 * k.val + 1)) 1 41 := by
        rw [show pair1_next.sl.v1971_5 d L tab t1 k r g1 g2 hR hin h10 = addf (pair1_next.sl.v1935_5 d L tab t1 k r g1 g2 hR hin h10) (pair1_next.sl.v1970_5 d L tab t1 k r g1 g2 hR hin h10) from rfl, a_v1935_5]
        exact acc_step d L fl tab (wL L).val (2 * t1.val + 1) (2 * k.val + 1) 1 _ hRB ⟨40, by decide⟩ ⟨1, by decide⟩ _ rfl _ hw_v1955_5 _ (k1_off101_form ..) _ _
      have a_v2007_5 : pair1_next.sl.v2007_5 d L tab t1 k r g1 g2 hR hin h10 = AccMath.accVec (rowF fl tab (wL L).val (2 * t1.val + 1) (2 * k.val + 1)) (offF fl (wL L).val (2 * t1.val + 1) (2 * k.val + 1)) 1 42 := by
        rw [show pair1_next.sl.v2007_5 d L tab t1 k r g1 g2 hR hin h10 = addf (pair1_next.sl.v1971_5 d L tab t1 k r g1 g2 hR hin h10) (pair1_next.sl.v2006_5 d L tab t1 k r g1 g2 hR hin h10) from rfl, a_v1971_5]
        exact acc_step d L fl tab (wL L).val (2 * t1.val + 1) (2 * k.val + 1) 1 _ hRB ⟨41, by decide⟩ ⟨1, by decide⟩ _ rfl _ hw_v1991_5 _ (k1_off102_form ..) _ _
      have a_v2043_5 : pair1_next.sl.v2043_5 d L tab t1 k r g1 g2 hR hin h10 = AccMath.accVec (rowF fl tab (wL L).val (2 * t1.val + 1) (2 * k.val + 1)) (offF fl (wL L).val (2 * t1.val + 1) (2 * k.val + 1)) 1 43 := by
        rw [show pair1_next.sl.v2043_5 d L tab t1 k r g1 g2 hR hin h10 = addf (pair1_next.sl.v2007_5 d L tab t1 k r g1 g2 hR hin h10) (pair1_next.sl.v2042_5 d L tab t1 k r g1 g2 hR hin h10) from rfl, a_v2007_5]
        exact acc_step d L fl tab (wL L).val (2 * t1.val + 1) (2 * k.val + 1) 1 _ hRB ⟨42, by decide⟩ ⟨1, by decide⟩ _ rfl _ hw_v2027_5 _ (k1_off103_form ..) _ _
      have a_v2079_5 : pair1_next.sl.v2079_5 d L tab t1 k r g1 g2 hR hin h10 = AccMath.accVec (rowF fl tab (wL L).val (2 * t1.val + 1) (2 * k.val + 1)) (offF fl (wL L).val (2 * t1.val + 1) (2 * k.val + 1)) 1 44 := by
        rw [show pair1_next.sl.v2079_5 d L tab t1 k r g1 g2 hR hin h10 = addf (pair1_next.sl.v2043_5 d L tab t1 k r g1 g2 hR hin h10) (pair1_next.sl.v2078_5 d L tab t1 k r g1 g2 hR hin h10) from rfl, a_v2043_5]
        exact acc_step d L fl tab (wL L).val (2 * t1.val + 1) (2 * k.val + 1) 1 _ hRB ⟨43, by decide⟩ ⟨1, by decide⟩ _ rfl _ hw_v2063_5 _ (k1_off104_form ..) _ _
      have a_v2115_5 : pair1_next.sl.v2115_5 d L tab t1 k r g1 g2 hR hin h10 = AccMath.accVec (rowF fl tab (wL L).val (2 * t1.val + 1) (2 * k.val + 1)) (offF fl (wL L).val (2 * t1.val + 1) (2 * k.val + 1)) 1 45 := by
        rw [show pair1_next.sl.v2115_5 d L tab t1 k r g1 g2 hR hin h10 = addf (pair1_next.sl.v2079_5 d L tab t1 k r g1 g2 hR hin h10) (pair1_next.sl.v2114_5 d L tab t1 k r g1 g2 hR hin h10) from rfl, a_v2079_5]
        exact acc_step d L fl tab (wL L).val (2 * t1.val + 1) (2 * k.val + 1) 1 _ hRB ⟨44, by decide⟩ ⟨1, by decide⟩ _ rfl _ hw_v2099_5 _ (k1_off105_form ..) _ _
      have a_v2151_5 : pair1_next.sl.v2151_5 d L tab t1 k r g1 g2 hR hin h10 = AccMath.accVec (rowF fl tab (wL L).val (2 * t1.val + 1) (2 * k.val + 1)) (offF fl (wL L).val (2 * t1.val + 1) (2 * k.val + 1)) 1 46 := by
        rw [show pair1_next.sl.v2151_5 d L tab t1 k r g1 g2 hR hin h10 = addf (pair1_next.sl.v2115_5 d L tab t1 k r g1 g2 hR hin h10) (pair1_next.sl.v2150_5 d L tab t1 k r g1 g2 hR hin h10) from rfl, a_v2115_5]
        exact acc_step d L fl tab (wL L).val (2 * t1.val + 1) (2 * k.val + 1) 1 _ hRB ⟨45, by decide⟩ ⟨1, by decide⟩ _ rfl _ hw_v2135_5 _ (k1_off106_form ..) _ _
      have a_v2187_5 : pair1_next.sl.v2187_5 d L tab t1 k r g1 g2 hR hin h10 = AccMath.accVec (rowF fl tab (wL L).val (2 * t1.val + 1) (2 * k.val + 1)) (offF fl (wL L).val (2 * t1.val + 1) (2 * k.val + 1)) 1 47 := by
        rw [show pair1_next.sl.v2187_5 d L tab t1 k r g1 g2 hR hin h10 = addf (pair1_next.sl.v2151_5 d L tab t1 k r g1 g2 hR hin h10) (pair1_next.sl.v2186_5 d L tab t1 k r g1 g2 hR hin h10) from rfl, a_v2151_5]
        exact acc_step d L fl tab (wL L).val (2 * t1.val + 1) (2 * k.val + 1) 1 _ hRB ⟨46, by decide⟩ ⟨1, by decide⟩ _ rfl _ hw_v2171_5 _ (k1_off107_form ..) _ _
      have a_v2223_5 : pair1_next.sl.v2223_5 d L tab t1 k r g1 g2 hR hin h10 = AccMath.accVec (rowF fl tab (wL L).val (2 * t1.val + 1) (2 * k.val + 1)) (offF fl (wL L).val (2 * t1.val + 1) (2 * k.val + 1)) 1 48 := by
        rw [show pair1_next.sl.v2223_5 d L tab t1 k r g1 g2 hR hin h10 = addf (pair1_next.sl.v2187_5 d L tab t1 k r g1 g2 hR hin h10) (pair1_next.sl.v2222_5 d L tab t1 k r g1 g2 hR hin h10) from rfl, a_v2187_5]
        exact acc_step d L fl tab (wL L).val (2 * t1.val + 1) (2 * k.val + 1) 1 _ hRB ⟨47, by decide⟩ ⟨1, by decide⟩ _ rfl _ hw_v2207_5 _ (k1_off108_form ..) _ _
      have a_v1588 : pair1_next.sl.v1588 d L tab t1 k r g1 g2 hR hin h10 = AccMath.accVec (rowF fl tab (wL L).val (2 * t1.val + 1) (2 * k.val + 1)) (offF fl (wL L).val (2 * t1.val + 1) (2 * k.val + 1)) 1 49 := by
        rw [show pair1_next.sl.v1588 d L tab t1 k r g1 g2 hR hin h10 = addf (pair1_next.sl.v2223_5 d L tab t1 k r g1 g2 hR hin h10) (pair1_next.sl.v1587 d L tab t1 k r g1 g2 hR hin h10) from rfl, a_v2223_5]
        exact acc_step d L fl tab (wL L).val (2 * t1.val + 1) (2 * k.val + 1) 1 _ hRB ⟨48, by decide⟩ ⟨1, by decide⟩ _ rfl _ hw_v1572 _ (k1_off110_form ..) _ _
      have a_v1622 : pair1_next.sl.v1622 d L tab t1 k r g1 g2 hR hin h10 = AccMath.accVec (rowF fl tab (wL L).val (2 * t1.val + 1) (2 * k.val + 1)) (offF fl (wL L).val (2 * t1.val + 1) (2 * k.val + 1)) 1 50 := by
        rw [show pair1_next.sl.v1622 d L tab t1 k r g1 g2 hR hin h10 = addf (pair1_next.sl.v1588 d L tab t1 k r g1 g2 hR hin h10) (pair1_next.sl.v1621 d L tab t1 k r g1 g2 hR hin h10) from rfl, a_v1588]
        exact acc_step d L fl tab (wL L).val (2 * t1.val + 1) (2 * k.val + 1) 1 _ hRB ⟨49, by decide⟩ ⟨1, by decide⟩ _ rfl _ hw_v1606 _ (k1_off111_form ..) _ _
      have a_v1561_B2 : pair1_next.sl.v1561 = AccMath.accVec (rowF fl tab (wL L).val (2 * t1.val + 1) (2 * k.val + 1)) (offF fl (wL L).val (2 * t1.val + 1) (2 * k.val + 1)) 2 0 := acc_zero fl tab (wL L).val (2 * t1.val + 1) (2 * k.val + 1) 2
      have a_v1691_3 : pair1_next.sl.v1691_3 d L tab t1 k r g1 g2 hR hin h10 = AccMath.accVec (rowF fl tab (wL L).val (2 * t1.val + 1) (2 * k.val + 1)) (offF fl (wL L).val (2 * t1.val + 1) (2 * k.val + 1)) 2 1 := by
        rw [show pair1_next.sl.v1691_3 d L tab t1 k r g1 g2 hR hin h10 = addf (pair1_next.sl.v1561) (pair1_next.sl.v1690_3 d L tab t1 k r g1 g2 hR hin h10) from rfl, a_v1561_B2]
        exact acc_step d L fl tab (wL L).val (2 * t1.val + 1) (2 * k.val + 1) 1 _ hRB ⟨0, by decide⟩ ⟨2, by decide⟩ _ rfl _ hw_v1667_3 _ (k1_off93_form ..) _ _
      have a_v1727_3 : pair1_next.sl.v1727_3 d L tab t1 k r g1 g2 hR hin h10 = AccMath.accVec (rowF fl tab (wL L).val (2 * t1.val + 1) (2 * k.val + 1)) (offF fl (wL L).val (2 * t1.val + 1) (2 * k.val + 1)) 2 2 := by
        rw [show pair1_next.sl.v1727_3 d L tab t1 k r g1 g2 hR hin h10 = addf (pair1_next.sl.v1691_3 d L tab t1 k r g1 g2 hR hin h10) (pair1_next.sl.v1726_3 d L tab t1 k r g1 g2 hR hin h10) from rfl, a_v1691_3]
        exact acc_step d L fl tab (wL L).val (2 * t1.val + 1) (2 * k.val + 1) 1 _ hRB ⟨1, by decide⟩ ⟨2, by decide⟩ _ rfl _ hw_v1703_3 _ (k1_off94_form ..) _ _
      have a_v1763_3 : pair1_next.sl.v1763_3 d L tab t1 k r g1 g2 hR hin h10 = AccMath.accVec (rowF fl tab (wL L).val (2 * t1.val + 1) (2 * k.val + 1)) (offF fl (wL L).val (2 * t1.val + 1) (2 * k.val + 1)) 2 3 := by
        rw [show pair1_next.sl.v1763_3 d L tab t1 k r g1 g2 hR hin h10 = addf (pair1_next.sl.v1727_3 d L tab t1 k r g1 g2 hR hin h10) (pair1_next.sl.v1762_3 d L tab t1 k r g1 g2 hR hin h10) from rfl, a_v1727_3]
        exact acc_step d L fl tab (wL L).val (2 * t1.val + 1) (2 * k.val + 1) 1 _ hRB ⟨2, by decide⟩ ⟨2, by decide⟩ _ rfl _ hw_v1739_3 _ (k1_off95_form ..) _ _
      have a_v1799_3 : pair1_next.sl.v1799_3 d L tab t1 k r g1 g2 hR hin h10 = AccMath.accVec (rowF fl tab (wL L).val (2 * t1.val + 1) (2 * k.val + 1)) (offF fl (wL L).val (2 * t1.val + 1) (2 * k.val + 1)) 2 4 := by
        rw [show pair1_next.sl.v1799_3 d L tab t1 k r g1 g2 hR hin h10 = addf (pair1_next.sl.v1763_3 d L tab t1 k r g1 g2 hR hin h10) (pair1_next.sl.v1798_3 d L tab t1 k r g1 g2 hR hin h10) from rfl, a_v1763_3]
        exact acc_step d L fl tab (wL L).val (2 * t1.val + 1) (2 * k.val + 1) 1 _ hRB ⟨3, by decide⟩ ⟨2, by decide⟩ _ rfl _ hw_v1775_3 _ (k1_off96_form ..) _ _
      have a_v1835_3 : pair1_next.sl.v1835_3 d L tab t1 k r g1 g2 hR hin h10 = AccMath.accVec (rowF fl tab (wL L).val (2 * t1.val + 1) (2 * k.val + 1)) (offF fl (wL L).val (2 * t1.val + 1) (2 * k.val + 1)) 2 5 := by
        rw [show pair1_next.sl.v1835_3 d L tab t1 k r g1 g2 hR hin h10 = addf (pair1_next.sl.v1799_3 d L tab t1 k r g1 g2 hR hin h10) (pair1_next.sl.v1834_3 d L tab t1 k r g1 g2 hR hin h10) from rfl, a_v1799_3]
        exact acc_step d L fl tab (wL L).val (2 * t1.val + 1) (2 * k.val + 1) 1 _ hRB ⟨4, by decide⟩ ⟨2, by decide⟩ _ rfl _ hw_v1811_3 _ (k1_off97_form ..) _ _
      have a_v1871_3 : pair1_next.sl.v1871_3 d L tab t1 k r g1 g2 hR hin h10 = AccMath.accVec (rowF fl tab (wL L).val (2 * t1.val + 1) (2 * k.val + 1)) (offF fl (wL L).val (2 * t1.val + 1) (2 * k.val + 1)) 2 6 := by
        rw [show pair1_next.sl.v1871_3 d L tab t1 k r g1 g2 hR hin h10 = addf (pair1_next.sl.v1835_3 d L tab t1 k r g1 g2 hR hin h10) (pair1_next.sl.v1870_3 d L tab t1 k r g1 g2 hR hin h10) from rfl, a_v1835_3]
        exact acc_step d L fl tab (wL L).val (2 * t1.val + 1) (2 * k.val + 1) 1 _ hRB ⟨5, by decide⟩ ⟨2, by decide⟩ _ rfl _ hw_v1847_3 _ (k1_off98_form ..) _ _
      have a_v1907_3 : pair1_next.sl.v1907_3 d L tab t1 k r g1 g2 hR hin h10 = AccMath.accVec (rowF fl tab (wL L).val (2 * t1.val + 1) (2 * k.val + 1)) (offF fl (wL L).val (2 * t1.val + 1) (2 * k.val + 1)) 2 7 := by
        rw [show pair1_next.sl.v1907_3 d L tab t1 k r g1 g2 hR hin h10 = addf (pair1_next.sl.v1871_3 d L tab t1 k r g1 g2 hR hin h10) (pair1_next.sl.v1906_3 d L tab t1 k r g1 g2 hR hin h10) from rfl, a_v1871_3]
        exact acc_step d L fl tab (wL L).val (2 * t1.val + 1) (2 * k.val + 1) 1 _ hRB ⟨6, by decide⟩ ⟨2, by decide⟩ _ rfl _ hw_v1883_3 _ (k1_off99_form ..) _ _
      have a_v1943_3 : pair1_next.sl.v1943_3 d L tab t1 k r g1 g2 hR hin h10 = AccMath.accVec (rowF fl tab (wL L).val (2 * t1.val + 1) (2 * k.val + 1)) (offF fl (wL L).val (2 * t1.val + 1) (2 * k.val + 1)) 2 8 := by
        rw [show pair1_next.sl.v1943_3 d L tab t1 k r g1 g2 hR hin h10 = addf (pair1_next.sl.v1907_3 d L tab t1 k r g1 g2 hR hin h10) (pair1_next.sl.v1942_3 d L tab t1 k r g1 g2 hR hin h10) from rfl, a_v1907_3]
        exact acc_step d L fl tab (wL L).val (2 * t1.val + 1) (2 * k.val + 1) 1 _ hRB ⟨7, by decide⟩ ⟨2, by decide⟩ _ rfl _ hw_v1919_3 _ (k1_off100_form ..) _ _
      have a_v1979_3 : pair1_next.sl.v1979_3 d L tab t1 k r g1 g2 hR hin h10 = AccMath.accVec (rowF fl tab (wL L).val (2 * t1.val + 1) (2 * k.val + 1)) (offF fl (wL L).val (2 * t1.val + 1) (2 * k.val + 1)) 2 9 := by
        rw [show pair1_next.sl.v1979_3 d L tab t1 k r g1 g2 hR hin h10 = addf (pair1_next.sl.v1943_3 d L tab t1 k r g1 g2 hR hin h10) (pair1_next.sl.v1978_3 d L tab t1 k r g1 g2 hR hin h10) from rfl, a_v1943_3]
        exact acc_step d L fl tab (wL L).val (2 * t1.val + 1) (2 * k.val + 1) 1 _ hRB ⟨8, by decide⟩ ⟨2, by decide⟩ _ rfl _ hw_v1955_3 _ (k1_off101_form ..) _ _
      have a_v2015_3 : pair1_next.sl.v2015_3 d L tab t1 k r g1 g2 hR hin h10 = AccMath.accVec (rowF fl tab (wL L).val (2 * t1.val + 1) (2 * k.val + 1)) (offF fl (wL L).val (2 * t1.val + 1) (2 * k.val + 1)) 2 10 := by
        rw [show pair1_next.sl.v2015_3 d L tab t1 k r g1 g2 hR hin h10 = addf (pair1_next.sl.v1979_3 d L tab t1 k r g1 g2 hR hin h10) (pair1_next.sl.v2014_3 d L tab t1 k r g1 g2 hR hin h10) from rfl, a_v1979_3]
        exact acc_step d L fl tab (wL L).val (2 * t1.val + 1) (2 * k.val + 1) 1 _ hRB ⟨9, by decide⟩ ⟨2, by decide⟩ _ rfl _ hw_v1991_3 _ (k1_off102_form ..) _ _
      have a_v2051_3 : pair1_next.sl.v2051_3 d L tab t1 k r g1 g2 hR hin h10 = AccMath.accVec (rowF fl tab (wL L).val (2 * t1.val + 1) (2 * k.val + 1)) (offF fl (wL L).val (2 * t1.val + 1) (2 * k.val + 1)) 2 11 := by
        rw [show pair1_next.sl.v2051_3 d L tab t1 k r g1 g2 hR hin h10 = addf (pair1_next.sl.v2015_3 d L tab t1 k r g1 g2 hR hin h10) (pair1_next.sl.v2050_3 d L tab t1 k r g1 g2 hR hin h10) from rfl, a_v2015_3]
        exact acc_step d L fl tab (wL L).val (2 * t1.val + 1) (2 * k.val + 1) 1 _ hRB ⟨10, by decide⟩ ⟨2, by decide⟩ _ rfl _ hw_v2027_3 _ (k1_off103_form ..) _ _
      have a_v2087_3 : pair1_next.sl.v2087_3 d L tab t1 k r g1 g2 hR hin h10 = AccMath.accVec (rowF fl tab (wL L).val (2 * t1.val + 1) (2 * k.val + 1)) (offF fl (wL L).val (2 * t1.val + 1) (2 * k.val + 1)) 2 12 := by
        rw [show pair1_next.sl.v2087_3 d L tab t1 k r g1 g2 hR hin h10 = addf (pair1_next.sl.v2051_3 d L tab t1 k r g1 g2 hR hin h10) (pair1_next.sl.v2086_3 d L tab t1 k r g1 g2 hR hin h10) from rfl, a_v2051_3]
        exact acc_step d L fl tab (wL L).val (2 * t1.val + 1) (2 * k.val + 1) 1 _ hRB ⟨11, by decide⟩ ⟨2, by decide⟩ _ rfl _ hw_v2063_3 _ (k1_off104_form ..) _ _
      have a_v2123_3 : pair1_next.sl.v2123_3 d L tab t1 k r g1 g2 hR hin h10 = AccMath.accVec (rowF fl tab (wL L).val (2 * t1.val + 1) (2 * k.val + 1)) (offF fl (wL L).val (2 * t1.val + 1) (2 * k.val + 1)) 2 13 := by
        rw [show pair1_next.sl.v2123_3 d L tab t1 k r g1 g2 hR hin h10 = addf (pair1_next.sl.v2087_3 d L tab t1 k r g1 g2 hR hin h10) (pair1_next.sl.v2122_3 d L tab t1 k r g1 g2 hR hin h10) from rfl, a_v2087_3]
        exact acc_step d L fl tab (wL L).val (2 * t1.val + 1) (2 * k.val + 1) 1 _ hRB ⟨12, by decide⟩ ⟨2, by decide⟩ _ rfl _ hw_v2099_3 _ (k1_off105_form ..) _ _
      have a_v2159_3 : pair1_next.sl.v2159_3 d L tab t1 k r g1 g2 hR hin h10 = AccMath.accVec (rowF fl tab (wL L).val (2 * t1.val + 1) (2 * k.val + 1)) (offF fl (wL L).val (2 * t1.val + 1) (2 * k.val + 1)) 2 14 := by
        rw [show pair1_next.sl.v2159_3 d L tab t1 k r g1 g2 hR hin h10 = addf (pair1_next.sl.v2123_3 d L tab t1 k r g1 g2 hR hin h10) (pair1_next.sl.v2158_3 d L tab t1 k r g1 g2 hR hin h10) from rfl, a_v2123_3]
        exact acc_step d L fl tab (wL L).val (2 * t1.val + 1) (2 * k.val + 1) 1 _ hRB ⟨13, by decide⟩ ⟨2, by decide⟩ _ rfl _ hw_v2135_3 _ (k1_off106_form ..) _ _
      have a_v2195_3 : pair1_next.sl.v2195_3 d L tab t1 k r g1 g2 hR hin h10 = AccMath.accVec (rowF fl tab (wL L).val (2 * t1.val + 1) (2 * k.val + 1)) (offF fl (wL L).val (2 * t1.val + 1) (2 * k.val + 1)) 2 15 := by
        rw [show pair1_next.sl.v2195_3 d L tab t1 k r g1 g2 hR hin h10 = addf (pair1_next.sl.v2159_3 d L tab t1 k r g1 g2 hR hin h10) (pair1_next.sl.v2194_3 d L tab t1 k r g1 g2 hR hin h10) from rfl, a_v2159_3]
        exact acc_step d L fl tab (wL L).val (2 * t1.val + 1) (2 * k.val + 1) 1 _ hRB ⟨14, by decide⟩ ⟨2, by decide⟩ _ rfl _ hw_v2171_3 _ (k1_off107_form ..) _ _
      have a_v2231_3 : pair1_next.sl.v2231_3 d L tab t1 k r g1 g2 hR hin h10 = AccMath.accVec (rowF fl tab (wL L).val (2 * t1.val + 1) (2 * k.val + 1)) (offF fl (wL L).val (2 * t1.val + 1) (2 * k.val + 1)) 2 16 := by
        rw [show pair1_next.sl.v2231_3 d L tab t1 k r g1 g2 hR hin h10 = addf (pair1_next.sl.v2195_3 d L tab t1 k r g1 g2 hR hin h10) (pair1_next.sl.v2230_3 d L tab t1 k r g1 g2 hR hin h10) from rfl, a_v2195_3]
        exact acc_step d L fl tab (wL L).val (2 * t1.val + 1) (2 * k.val + 1) 1 _ hRB ⟨15, by decide⟩ ⟨2, by decide⟩ _ rfl _ hw_v2207_3 _ (k1_off108_form ..) _ _
      have a_v1691_4 : pair1_next.sl.v1691_4 d L tab t1 k r g1 g2 hR hin h10 = AccMath.accVec (rowF fl tab (wL L).val (2 * t1.val + 1) (2 * k.val + 1)) (offF fl (wL L).val (2 * t1.val + 1) (2 * k.val + 1)) 2 17 := by
        rw [show pair1_next.sl.v1691_4 d L tab t1 k r g1 g2 hR hin h10 = addf (pair1_next.sl.v2231_3 d L tab t1 k r g1 g2 hR hin h10) (pair1_next.sl.v1690_4 d L tab t1 k r g1 g2 hR hin h10) from rfl, a_v2231_3]
        exact acc_step d L fl tab (wL L).val (2 * t1.val + 1) (2 * k.val + 1) 1 _ hRB ⟨16, by decide⟩ ⟨2, by decide⟩ _ rfl _ hw_v1667_4 _ (k1_off93_form ..) _ _
      have a_v1727_4 : pair1_next.sl.v1727_4 d L tab t1 k r g1 g2 hR hin h10 = AccMath.accVec (rowF fl tab (wL L).val (2 * t1.val + 1) (2 * k.val + 1)) (offF fl (wL L).val (2 * t1.val + 1) (2 * k.val + 1)) 2 18 := by
        rw [show pair1_next.sl.v1727_4 d L tab t1 k r g1 g2 hR hin h10 = addf (pair1_next.sl.v1691_4 d L tab t1 k r g1 g2 hR hin h10) (pair1_next.sl.v1726_4 d L tab t1 k r g1 g2 hR hin h10) from rfl, a_v1691_4]
        exact acc_step d L fl tab (wL L).val (2 * t1.val + 1) (2 * k.val + 1) 1 _ hRB ⟨17, by decide⟩ ⟨2, by decide⟩ _ rfl _ hw_v1703_4 _ (k1_off94_form ..) _ _
      have a_v1763_4 : pair1_next.sl.v1763_4 d L tab t1 k r g1 g2 hR hin h10 = AccMath.accVec (rowF fl tab (wL L).val (2 * t1.val + 1) (2 * k.val + 1)) (offF fl (wL L).val (2 * t1.val + 1) (2 * k.val + 1)) 2 19 := by
        rw [show pair1_next.sl.v1763_4 d L tab t1 k r g1 g2 hR hin h10 = addf (pair1_next.sl.v1727_4 d L tab t1 k r g1 g2 hR hin h10) (pair1_next.sl.v1762_4 d L tab t1 k r g1 g2 hR hin h10) from rfl, a_v1727_4]
        exact acc_step d L fl tab (wL L).val (2 * t1.val + 1) (2 * k.val + 1) 1 _ hRB ⟨18, by decide⟩ ⟨2, by decide⟩ _ rfl _ hw_v1739_4 _ (k1_off95_form ..) _ _
      have a_v1799_4 : pair1_next.sl.v1799_4 d L tab t1 k r g1 g2 hR hin h10 = AccMath.accVec (rowF fl tab (wL L).val (2 * t1.val + 1) (2 * k.val + 1)) (offF fl (wL L).val (2 * t1.val + 1) (2 * k.val + 1)) 2 20 := by
        rw [show pair1_next.sl.v1799_4 d L tab t1 k r g1 g2 hR hin h10 = addf (pair1_next.sl.v1763_4 d L tab t1 k r g1 g2 hR hin h10) (pair1_next.sl.v1798_4 d L tab t1 k r g1 g2 hR hin h10) from rfl, a_v1763_4]
        exact acc_step d L fl tab (wL L).val (2 * t1.val + 1) (2 * k.val + 1) 1 _ hRB ⟨19, by decide⟩ ⟨2, by decide⟩ _ rfl _ hw_v1775_4 _ (k1_off96_form ..) _ _
      have a_v1835_4 : pair1_next.sl.v1835_4 d L tab t1 k r g1 g2 hR hin h10 = AccMath.accVec (rowF fl tab (wL L).val (2 * t1.val + 1) (2 * k.val + 1)) (offF fl (wL L).val (2 * t1.val + 1) (2 * k.val + 1)) 2 21 := by
        rw [show pair1_next.sl.v1835_4 d L tab t1 k r g1 g2 hR hin h10 = addf (pair1_next.sl.v1799_4 d L tab t1 k r g1 g2 hR hin h10) (pair1_next.sl.v1834_4 d L tab t1 k r g1 g2 hR hin h10) from rfl, a_v1799_4]
        exact acc_step d L fl tab (wL L).val (2 * t1.val + 1) (2 * k.val + 1) 1 _ hRB ⟨20, by decide⟩ ⟨2, by decide⟩ _ rfl _ hw_v1811_4 _ (k1_off97_form ..) _ _
      have a_v1871_4 : pair1_next.sl.v1871_4 d L tab t1 k r g1 g2 hR hin h10 = AccMath.accVec (rowF fl tab (wL L).val (2 * t1.val + 1) (2 * k.val + 1)) (offF fl (wL L).val (2 * t1.val + 1) (2 * k.val + 1)) 2 22 := by
        rw [show pair1_next.sl.v1871_4 d L tab t1 k r g1 g2 hR hin h10 = addf (pair1_next.sl.v1835_4 d L tab t1 k r g1 g2 hR hin h10) (pair1_next.sl.v1870_4 d L tab t1 k r g1 g2 hR hin h10) from rfl, a_v1835_4]
        exact acc_step d L fl tab (wL L).val (2 * t1.val + 1) (2 * k.val + 1) 1 _ hRB ⟨21, by decide⟩ ⟨2, by decide⟩ _ rfl _ hw_v1847_4 _ (k1_off98_form ..) _ _
      have a_v1907_4 : pair1_next.sl.v1907_4 d L tab t1 k r g1 g2 hR hin h10 = AccMath.accVec (rowF fl tab (wL L).val (2 * t1.val + 1) (2 * k.val + 1)) (offF fl (wL L).val (2 * t1.val + 1) (2 * k.val + 1)) 2 23 := by
        rw [show pair1_next.sl.v1907_4 d L tab t1 k r g1 g2 hR hin h10 = addf (pair1_next.sl.v1871_4 d L tab t1 k r g1 g2 hR hin h10) (pair1_next.sl.v1906_4 d L tab t1 k r g1 g2 hR hin h10) from rfl, a_v1871_4]
        exact acc_step d L fl tab (wL L).val (2 * t1.val + 1) (2 * k.val + 1) 1 _ hRB ⟨22, by decide⟩ ⟨2, by decide⟩ _ rfl _ hw_v1883_4 _ (k1_off99_form ..) _ _
      have a_v1943_4 : pair1_next.sl.v1943_4 d L tab t1 k r g1 g2 hR hin h10 = AccMath.accVec (rowF fl tab (wL L).val (2 * t1.val + 1) (2 * k.val + 1)) (offF fl (wL L).val (2 * t1.val + 1) (2 * k.val + 1)) 2 24 := by
        rw [show pair1_next.sl.v1943_4 d L tab t1 k r g1 g2 hR hin h10 = addf (pair1_next.sl.v1907_4 d L tab t1 k r g1 g2 hR hin h10) (pair1_next.sl.v1942_4 d L tab t1 k r g1 g2 hR hin h10) from rfl, a_v1907_4]
        exact acc_step d L fl tab (wL L).val (2 * t1.val + 1) (2 * k.val + 1) 1 _ hRB ⟨23, by decide⟩ ⟨2, by decide⟩ _ rfl _ hw_v1919_4 _ (k1_off100_form ..) _ _
      have a_v1979_4 : pair1_next.sl.v1979_4 d L tab t1 k r g1 g2 hR hin h10 = AccMath.accVec (rowF fl tab (wL L).val (2 * t1.val + 1) (2 * k.val + 1)) (offF fl (wL L).val (2 * t1.val + 1) (2 * k.val + 1)) 2 25 := by
        rw [show pair1_next.sl.v1979_4 d L tab t1 k r g1 g2 hR hin h10 = addf (pair1_next.sl.v1943_4 d L tab t1 k r g1 g2 hR hin h10) (pair1_next.sl.v1978_4 d L tab t1 k r g1 g2 hR hin h10) from rfl, a_v1943_4]
        exact acc_step d L fl tab (wL L).val (2 * t1.val + 1) (2 * k.val + 1) 1 _ hRB ⟨24, by decide⟩ ⟨2, by decide⟩ _ rfl _ hw_v1955_4 _ (k1_off101_form ..) _ _
      have a_v2015_4 : pair1_next.sl.v2015_4 d L tab t1 k r g1 g2 hR hin h10 = AccMath.accVec (rowF fl tab (wL L).val (2 * t1.val + 1) (2 * k.val + 1)) (offF fl (wL L).val (2 * t1.val + 1) (2 * k.val + 1)) 2 26 := by
        rw [show pair1_next.sl.v2015_4 d L tab t1 k r g1 g2 hR hin h10 = addf (pair1_next.sl.v1979_4 d L tab t1 k r g1 g2 hR hin h10) (pair1_next.sl.v2014_4 d L tab t1 k r g1 g2 hR hin h10) from rfl, a_v1979_4]
        exact acc_step d L fl tab (wL L).val (2 * t1.val + 1) (2 * k.val + 1) 1 _ hRB ⟨25, by decide⟩ ⟨2, by decide⟩ _ rfl _ hw_v1991_4 _ (k1_off102_form ..) _ _
      have a_v2051_4 : pair1_next.sl.v2051_4 d L tab t1 k r g1 g2 hR hin h10 = AccMath.accVec (rowF fl tab (wL L).val (2 * t1.val + 1) (2 * k.val + 1)) (offF fl (wL L).val (2 * t1.val + 1) (2 * k.val + 1)) 2 27 := by
        rw [show pair1_next.sl.v2051_4 d L tab t1 k r g1 g2 hR hin h10 = addf (pair1_next.sl.v2015_4 d L tab t1 k r g1 g2 hR hin h10) (pair1_next.sl.v2050_4 d L tab t1 k r g1 g2 hR hin h10) from rfl, a_v2015_4]
        exact acc_step d L fl tab (wL L).val (2 * t1.val + 1) (2 * k.val + 1) 1 _ hRB ⟨26, by decide⟩ ⟨2, by decide⟩ _ rfl _ hw_v2027_4 _ (k1_off103_form ..) _ _
      have a_v2087_4 : pair1_next.sl.v2087_4 d L tab t1 k r g1 g2 hR hin h10 = AccMath.accVec (rowF fl tab (wL L).val (2 * t1.val + 1) (2 * k.val + 1)) (offF fl (wL L).val (2 * t1.val + 1) (2 * k.val + 1)) 2 28 := by
        rw [show pair1_next.sl.v2087_4 d L tab t1 k r g1 g2 hR hin h10 = addf (pair1_next.sl.v2051_4 d L tab t1 k r g1 g2 hR hin h10) (pair1_next.sl.v2086_4 d L tab t1 k r g1 g2 hR hin h10) from rfl, a_v2051_4]
        exact acc_step d L fl tab (wL L).val (2 * t1.val + 1) (2 * k.val + 1) 1 _ hRB ⟨27, by decide⟩ ⟨2, by decide⟩ _ rfl _ hw_v2063_4 _ (k1_off104_form ..) _ _
      have a_v2123_4 : pair1_next.sl.v2123_4 d L tab t1 k r g1 g2 hR hin h10 = AccMath.accVec (rowF fl tab (wL L).val (2 * t1.val + 1) (2 * k.val + 1)) (offF fl (wL L).val (2 * t1.val + 1) (2 * k.val + 1)) 2 29 := by
        rw [show pair1_next.sl.v2123_4 d L tab t1 k r g1 g2 hR hin h10 = addf (pair1_next.sl.v2087_4 d L tab t1 k r g1 g2 hR hin h10) (pair1_next.sl.v2122_4 d L tab t1 k r g1 g2 hR hin h10) from rfl, a_v2087_4]
        exact acc_step d L fl tab (wL L).val (2 * t1.val + 1) (2 * k.val + 1) 1 _ hRB ⟨28, by decide⟩ ⟨2, by decide⟩ _ rfl _ hw_v2099_4 _ (k1_off105_form ..) _ _
      have a_v2159_4 : pair1_next.sl.v2159_4 d L tab t1 k r g1 g2 hR hin h10 = AccMath.accVec (rowF fl tab (wL L).val (2 * t1.val + 1) (2 * k.val + 1)) (offF fl (wL L).val (2 * t1.val + 1) (2 * k.val + 1)) 2 30 := by
        rw [show pair1_next.sl.v2159_4 d L tab t1 k r g1 g2 hR hin h10 = addf (pair1_next.sl.v2123_4 d L tab t1 k r g1 g2 hR hin h10) (pair1_next.sl.v2158_4 d L tab t1 k r g1 g2 hR hin h10) from rfl, a_v2123_4]
        exact acc_step d L fl tab (wL L).val (2 * t1.val + 1) (2 * k.val + 1) 1 _ hRB ⟨29, by decide⟩ ⟨2, by decide⟩ _ rfl _ hw_v2135_4 _ (k1_off106_form ..) _ _
      have a_v2195_4 : pair1_next.sl.v2195_4 d L tab t1 k r g1 g2 hR hin h10 = AccMath.accVec (rowF fl tab (wL L).val (2 * t1.val + 1) (2 * k.val + 1)) (offF fl (wL L).val (2 * t1.val + 1) (2 * k.val + 1)) 2 31 := by
        rw [show pair1_next.sl.v2195_4 d L tab t1 k r g1 g2 hR hin h10 = addf (pair1_next.sl.v2159_4 d L tab t1 k r g1 g2 hR hin h10) (pair1_next.sl.v2194_4 d L tab t1 k r g1 g2 hR hin h10) from rfl, a_v2159_4]
        exact acc_step d L fl tab (wL L).val (2 * t1.val + 1) (2 * k.val + 1) 1 _ hRB ⟨30, by decide⟩ ⟨2, by decide⟩ _ rfl _ hw_v2171_4 _ (k1_off107_form ..) _ _
      have a_v2231_4 : pair1_next.sl.v2231_4 d L tab t1 k r g1 g2 hR hin h10 = AccMath.accVec (rowF fl tab (wL L).val (2 * t1.val + 1) (2 * k.val + 1)) (offF fl (wL L).val (2 * t1.val + 1) (2 * k.val + 1)) 2 32 := by
        rw [show pair1_next.sl.v2231_4 d L tab t1 k r g1 g2 hR hin h10 = addf (pair1_next.sl.v2195_4 d L tab t1 k r g1 g2 hR hin h10) (pair1_next.sl.v2230_4 d L tab t1 k r g1 g2 hR hin h10) from rfl, a_v2195_4]
        exact acc_step d L fl tab (wL L).val (2 * t1.val + 1) (2 * k.val + 1) 1 _ hRB ⟨31, by decide⟩ ⟨2, by decide⟩ _ rfl _ hw_v2207_4 _ (k1_off108_form ..) _ _
      have a_v1691_5 : pair1_next.sl.v1691_5 d L tab t1 k r g1 g2 hR hin h10 = AccMath.accVec (rowF fl tab (wL L).val (2 * t1.val + 1) (2 * k.val + 1)) (offF fl (wL L).val (2 * t1.val + 1) (2 * k.val + 1)) 2 33 := by
        rw [show pair1_next.sl.v1691_5 d L tab t1 k r g1 g2 hR hin h10 = addf (pair1_next.sl.v2231_4 d L tab t1 k r g1 g2 hR hin h10) (pair1_next.sl.v1690_5 d L tab t1 k r g1 g2 hR hin h10) from rfl, a_v2231_4]
        exact acc_step d L fl tab (wL L).val (2 * t1.val + 1) (2 * k.val + 1) 1 _ hRB ⟨32, by decide⟩ ⟨2, by decide⟩ _ rfl _ hw_v1667_5 _ (k1_off93_form ..) _ _
      have a_v1727_5 : pair1_next.sl.v1727_5 d L tab t1 k r g1 g2 hR hin h10 = AccMath.accVec (rowF fl tab (wL L).val (2 * t1.val + 1) (2 * k.val + 1)) (offF fl (wL L).val (2 * t1.val + 1) (2 * k.val + 1)) 2 34 := by
        rw [show pair1_next.sl.v1727_5 d L tab t1 k r g1 g2 hR hin h10 = addf (pair1_next.sl.v1691_5 d L tab t1 k r g1 g2 hR hin h10) (pair1_next.sl.v1726_5 d L tab t1 k r g1 g2 hR hin h10) from rfl, a_v1691_5]
        exact acc_step d L fl tab (wL L).val (2 * t1.val + 1) (2 * k.val + 1) 1 _ hRB ⟨33, by decide⟩ ⟨2, by decide⟩ _ rfl _ hw_v1703_5 _ (k1_off94_form ..) _ _
      have a_v1763_5 : pair1_next.sl.v1763_5 d L tab t1 k r g1 g2 hR hin h10 = AccMath.accVec (rowF fl tab (wL L).val (2 * t1.val + 1) (2 * k.val + 1)) (offF fl (wL L).val (2 * t1.val + 1) (2 * k.val + 1)) 2 35 := by
        rw [show pair1_next.sl.v1763_5 d L tab t1 k r g1 g2 hR hin h10 = addf (pair1_next.sl.v1727_5 d L tab t1 k r g1 g2 hR hin h10) (pair1_next.sl.v1762_5 d L tab t1 k r g1 g2 hR hin h10) from rfl, a_v1727_5]
        exact acc_step d L fl tab (wL L).val (2 * t1.val + 1) (2 * k.val + 1) 1 _ hRB ⟨34, by decide⟩ ⟨2, by decide⟩ _ rfl _ hw_v1739_5 _ (k1_off95_form ..) _ _
      have a_v1799_5 : pair1_next.sl.v1799_5 d L tab t1 k r g1 g2 hR hin h10 = AccMath.accVec (rowF fl tab (wL L).val (2 * t1.val + 1) (2 * k.val + 1)) (offF fl (wL L).val (2 * t1.val + 1) (2 * k.val + 1)) 2 36 := by
        rw [show pair1_next.sl.v1799_5 d L tab t1 k r g1 g2 hR hin h10 = addf (pair1_next.sl.v1763_5 d L tab t1 k r g1 g2 hR hin h10) (pair1_next.sl.v1798_5 d L tab t1 k r g1 g2 hR hin h10) from rfl, a_v1763_5]
        exact acc_step d L fl tab (wL L).val (2 * t1.val + 1) (2 * k.val + 1) 1 _ hRB ⟨35, by decide⟩ ⟨2, by decide⟩ _ rfl _ hw_v1775_5 _ (k1_off96_form ..) _ _
      have a_v1835_5 : pair1_next.sl.v1835_5 d L tab t1 k r g1 g2 hR hin h10 = AccMath.accVec (rowF fl tab (wL L).val (2 * t1.val + 1) (2 * k.val + 1)) (offF fl (wL L).val (2 * t1.val + 1) (2 * k.val + 1)) 2 37 := by
        rw [show pair1_next.sl.v1835_5 d L tab t1 k r g1 g2 hR hin h10 = addf (pair1_next.sl.v1799_5 d L tab t1 k r g1 g2 hR hin h10) (pair1_next.sl.v1834_5 d L tab t1 k r g1 g2 hR hin h10) from rfl, a_v1799_5]
        exact acc_step d L fl tab (wL L).val (2 * t1.val + 1) (2 * k.val + 1) 1 _ hRB ⟨36, by decide⟩ ⟨2, by decide⟩ _ rfl _ hw_v1811_5 _ (k1_off97_form ..) _ _
      have a_v1871_5 : pair1_next.sl.v1871_5 d L tab t1 k r g1 g2 hR hin h10 = AccMath.accVec (rowF fl tab (wL L).val (2 * t1.val + 1) (2 * k.val + 1)) (offF fl (wL L).val (2 * t1.val + 1) (2 * k.val + 1)) 2 38 := by
        rw [show pair1_next.sl.v1871_5 d L tab t1 k r g1 g2 hR hin h10 = addf (pair1_next.sl.v1835_5 d L tab t1 k r g1 g2 hR hin h10) (pair1_next.sl.v1870_5 d L tab t1 k r g1 g2 hR hin h10) from rfl, a_v1835_5]
        exact acc_step d L fl tab (wL L).val (2 * t1.val + 1) (2 * k.val + 1) 1 _ hRB ⟨37, by decide⟩ ⟨2, by decide⟩ _ rfl _ hw_v1847_5 _ (k1_off98_form ..) _ _
      have a_v1907_5 : pair1_next.sl.v1907_5 d L tab t1 k r g1 g2 hR hin h10 = AccMath.accVec (rowF fl tab (wL L).val (2 * t1.val + 1) (2 * k.val + 1)) (offF fl (wL L).val (2 * t1.val + 1) (2 * k.val + 1)) 2 39 := by
        rw [show pair1_next.sl.v1907_5 d L tab t1 k r g1 g2 hR hin h10 = addf (pair1_next.sl.v1871_5 d L tab t1 k r g1 g2 hR hin h10) (pair1_next.sl.v1906_5 d L tab t1 k r g1 g2 hR hin h10) from rfl, a_v1871_5]
        exact acc_step d L fl tab (wL L).val (2 * t1.val + 1) (2 * k.val + 1) 1 _ hRB ⟨38, by decide⟩ ⟨2, by decide⟩ _ rfl _ hw_v1883_5 _ (k1_off99_form ..) _ _
      have a_v1943_5 : pair1_next.sl.v1943_5 d L tab t1 k r g1 g2 hR hin h10 = AccMath.accVec (rowF fl tab (wL L).val (2 * t1.val + 1) (2 * k.val + 1)) (offF fl (wL L).val (2 * t1.val + 1) (2 * k.val + 1)) 2 40 := by
        rw [show pair1_next.sl.v1943_5 d L tab t1 k r g1 g2 hR hin h10 = addf (pair1_next.sl.v1907_5 d L tab t1 k r g1 g2 hR hin h10) (pair1_next.sl.v1942_5 d L tab t1 k r g1 g2 hR hin h10) from rfl, a_v1907_5]
        exact acc_step d L fl tab (wL L).val (2 * t1.val + 1) (2 * k.val + 1) 1 _ hRB ⟨39, by decide⟩ ⟨2, by decide⟩ _ rfl _ hw_v1919_5 _ (k1_off100_form ..) _ _
      have a_v1979_5 : pair1_next.sl.v1979_5 d L tab t1 k r g1 g2 hR hin h10 = AccMath.accVec (rowF fl tab (wL L).val (2 * t1.val + 1) (2 * k.val + 1)) (offF fl (wL L).val (2 * t1.val + 1) (2 * k.val + 1)) 2 41 := by
        rw [show pair1_next.sl.v1979_5 d L tab t1 k r g1 g2 hR hin h10 = addf (pair1_next.sl.v1943_5 d L tab t1 k r g1 g2 hR hin h10) (pair1_next.sl.v1978_5 d L tab t1 k r g1 g2 hR hin h10) from rfl, a_v1943_5]
        exact acc_step d L fl tab (wL L).val (2 * t1.val + 1) (2 * k.val + 1) 1 _ hRB ⟨40, by decide⟩ ⟨2, by decide⟩ _ rfl _ hw_v1955_5 _ (k1_off101_form ..) _ _
      have a_v2015_5 : pair1_next.sl.v2015_5 d L tab t1 k r g1 g2 hR hin h10 = AccMath.accVec (rowF fl tab (wL L).val (2 * t1.val + 1) (2 * k.val + 1)) (offF fl (wL L).val (2 * t1.val + 1) (2 * k.val + 1)) 2 42 := by
        rw [show pair1_next.sl.v2015_5 d L tab t1 k r g1 g2 hR hin h10 = addf (pair1_next.sl.v1979_5 d L tab t1 k r g1 g2 hR hin h10) (pair1_next.sl.v2014_5 d L tab t1 k r g1 g2 hR hin h10) from rfl, a_v1979_5]
        exact acc_step d L fl tab (wL L).val (2 * t1.val + 1) (2 * k.val + 1) 1 _ hRB ⟨41, by decide⟩ ⟨2, by decide⟩ _ rfl _ hw_v1991_5 _ (k1_off102_form ..) _ _
      have a_v2051_5 : pair1_next.sl.v2051_5 d L tab t1 k r g1 g2 hR hin h10 = AccMath.accVec (rowF fl tab (wL L).val (2 * t1.val + 1) (2 * k.val + 1)) (offF fl (wL L).val (2 * t1.val + 1) (2 * k.val + 1)) 2 43 := by
        rw [show pair1_next.sl.v2051_5 d L tab t1 k r g1 g2 hR hin h10 = addf (pair1_next.sl.v2015_5 d L tab t1 k r g1 g2 hR hin h10) (pair1_next.sl.v2050_5 d L tab t1 k r g1 g2 hR hin h10) from rfl, a_v2015_5]
        exact acc_step d L fl tab (wL L).val (2 * t1.val + 1) (2 * k.val + 1) 1 _ hRB ⟨42, by decide⟩ ⟨2, by decide⟩ _ rfl _ hw_v2027_5 _ (k1_off103_form ..) _ _
      have a_v2087_5 : pair1_next.sl.v2087_5 d L tab t1 k r g1 g2 hR hin h10 = AccMath.accVec (rowF fl tab (wL L).val (2 * t1.val + 1) (2 * k.val + 1)) (offF fl (wL L).val (2 * t1.val + 1) (2 * k.val + 1)) 2 44 := by
        rw [show pair1_next.sl.v2087_5 d L tab t1 k r g1 g2 hR hin h10 = addf (pair1_next.sl.v2051_5 d L tab t1 k r g1 g2 hR hin h10) (pair1_next.sl.v2086_5 d L tab t1 k r g1 g2 hR hin h10) from rfl, a_v2051_5]
        exact acc_step d L fl tab (wL L).val (2 * t1.val + 1) (2 * k.val + 1) 1 _ hRB ⟨43, by decide⟩ ⟨2, by decide⟩ _ rfl _ hw_v2063_5 _ (k1_off104_form ..) _ _
      have a_v2123_5 : pair1_next.sl.v2123_5 d L tab t1 k r g1 g2 hR hin h10 = AccMath.accVec (rowF fl tab (wL L).val (2 * t1.val + 1) (2 * k.val + 1)) (offF fl (wL L).val (2 * t1.val + 1) (2 * k.val + 1)) 2 45 := by
        rw [show pair1_next.sl.v2123_5 d L tab t1 k r g1 g2 hR hin h10 = addf (pair1_next.sl.v2087_5 d L tab t1 k r g1 g2 hR hin h10) (pair1_next.sl.v2122_5 d L tab t1 k r g1 g2 hR hin h10) from rfl, a_v2087_5]
        exact acc_step d L fl tab (wL L).val (2 * t1.val + 1) (2 * k.val + 1) 1 _ hRB ⟨44, by decide⟩ ⟨2, by decide⟩ _ rfl _ hw_v2099_5 _ (k1_off105_form ..) _ _
      have a_v2159_5 : pair1_next.sl.v2159_5 d L tab t1 k r g1 g2 hR hin h10 = AccMath.accVec (rowF fl tab (wL L).val (2 * t1.val + 1) (2 * k.val + 1)) (offF fl (wL L).val (2 * t1.val + 1) (2 * k.val + 1)) 2 46 := by
        rw [show pair1_next.sl.v2159_5 d L tab t1 k r g1 g2 hR hin h10 = addf (pair1_next.sl.v2123_5 d L tab t1 k r g1 g2 hR hin h10) (pair1_next.sl.v2158_5 d L tab t1 k r g1 g2 hR hin h10) from rfl, a_v2123_5]
        exact acc_step d L fl tab (wL L).val (2 * t1.val + 1) (2 * k.val + 1) 1 _ hRB ⟨45, by decide⟩ ⟨2, by decide⟩ _ rfl _ hw_v2135_5 _ (k1_off106_form ..) _ _
      have a_v2195_5 : pair1_next.sl.v2195_5 d L tab t1 k r g1 g2 hR hin h10 = AccMath.accVec (rowF fl tab (wL L).val (2 * t1.val + 1) (2 * k.val + 1)) (offF fl (wL L).val (2 * t1.val + 1) (2 * k.val + 1)) 2 47 := by
        rw [show pair1_next.sl.v2195_5 d L tab t1 k r g1 g2 hR hin h10 = addf (pair1_next.sl.v2159_5 d L tab t1 k r g1 g2 hR hin h10) (pair1_next.sl.v2194_5 d L tab t1 k r g1 g2 hR hin h10) from rfl, a_v2159_5]
        exact acc_step d L fl tab (wL L).val (2 * t1.val + 1) (2 * k.val + 1) 1 _ hRB ⟨46, by decide⟩ ⟨2, by decide⟩ _ rfl _ hw_v2171_5 _ (k1_off107_form ..) _ _
      have a_v2231_5 : pair1_next.sl.v2231_5 d L tab t1 k r g1 g2 hR hin h10 = AccMath.accVec (rowF fl tab (wL L).val (2 * t1.val + 1) (2 * k.val + 1)) (offF fl (wL L).val (2 * t1.val + 1) (2 * k.val + 1)) 2 48 := by
        rw [show pair1_next.sl.v2231_5 d L tab t1 k r g1 g2 hR hin h10 = addf (pair1_next.sl.v2195_5 d L tab t1 k r g1 g2 hR hin h10) (pair1_next.sl.v2230_5 d L tab t1 k r g1 g2 hR hin h10) from rfl, a_v2195_5]
        exact acc_step d L fl tab (wL L).val (2 * t1.val + 1) (2 * k.val + 1) 1 _ hRB ⟨47, by decide⟩ ⟨2, by decide⟩ _ rfl _ hw_v2207_5 _ (k1_off108_form ..) _ _
      have a_v1596 : pair1_next.sl.v1596 d L tab t1 k r g1 g2 hR hin h10 = AccMath.accVec (rowF fl tab (wL L).val (2 * t1.val + 1) (2 * k.val + 1)) (offF fl (wL L).val (2 * t1.val + 1) (2 * k.val + 1)) 2 49 := by
        rw [show pair1_next.sl.v1596 d L tab t1 k r g1 g2 hR hin h10 = addf (pair1_next.sl.v2231_5 d L tab t1 k r g1 g2 hR hin h10) (pair1_next.sl.v1595 d L tab t1 k r g1 g2 hR hin h10) from rfl, a_v2231_5]
        exact acc_step d L fl tab (wL L).val (2 * t1.val + 1) (2 * k.val + 1) 1 _ hRB ⟨48, by decide⟩ ⟨2, by decide⟩ _ rfl _ hw_v1572 _ (k1_off110_form ..) _ _
      have a_v1630 : pair1_next.sl.v1630 d L tab t1 k r g1 g2 hR hin h10 = AccMath.accVec (rowF fl tab (wL L).val (2 * t1.val + 1) (2 * k.val + 1)) (offF fl (wL L).val (2 * t1.val + 1) (2 * k.val + 1)) 2 50 := by
        rw [show pair1_next.sl.v1630 d L tab t1 k r g1 g2 hR hin h10 = addf (pair1_next.sl.v1596 d L tab t1 k r g1 g2 hR hin h10) (pair1_next.sl.v1629 d L tab t1 k r g1 g2 hR hin h10) from rfl, a_v1596]
        exact acc_step d L fl tab (wL L).val (2 * t1.val + 1) (2 * k.val + 1) 1 _ hRB ⟨49, by decide⟩ ⟨2, by decide⟩ _ rfl _ hw_v1606 _ (k1_off111_form ..) _ _
      have a_v1561_B3 : pair1_next.sl.v1561 = AccMath.accVec (rowF fl tab (wL L).val (2 * t1.val + 1) (2 * k.val + 1)) (offF fl (wL L).val (2 * t1.val + 1) (2 * k.val + 1)) 3 0 := acc_zero fl tab (wL L).val (2 * t1.val + 1) (2 * k.val + 1) 3
      have a_v1699_3 : pair1_next.sl.v1699_3 d L tab t1 k r g1 g2 hR hin h10 = AccMath.accVec (rowF fl tab (wL L).val (2 * t1.val + 1) (2 * k.val + 1)) (offF fl (wL L).val (2 * t1.val + 1) (2 * k.val + 1)) 3 1 := by
        rw [show pair1_next.sl.v1699_3 d L tab t1 k r g1 g2 hR hin h10 = addf (pair1_next.sl.v1561) (pair1_next.sl.v1698_3 d L tab t1 k r g1 g2 hR hin h10) from rfl, a_v1561_B3]
        exact acc_step d L fl tab (wL L).val (2 * t1.val + 1) (2 * k.val + 1) 1 _ hRB ⟨0, by decide⟩ ⟨3, by decide⟩ _ rfl _ hw_v1667_3 _ (k1_off93_form ..) _ _
      have a_v1735_3 : pair1_next.sl.v1735_3 d L tab t1 k r g1 g2 hR hin h10 = AccMath.accVec (rowF fl tab (wL L).val (2 * t1.val + 1) (2 * k.val + 1)) (offF fl (wL L).val (2 * t1.val + 1) (2 * k.val + 1)) 3 2 := by
        rw [show pair1_next.sl.v1735_3 d L tab t1 k r g1 g2 hR hin h10 = addf (pair1_next.sl.v1699_3 d L tab t1 k r g1 g2 hR hin h10) (pair1_next.sl.v1734_3 d L tab t1 k r g1 g2 hR hin h10) from rfl, a_v1699_3]
        exact acc_step d L fl tab (wL L).val (2 * t1.val + 1) (2 * k.val + 1) 1 _ hRB ⟨1, by decide⟩ ⟨3, by decide⟩ _ rfl _ hw_v1703_3 _ (k1_off94_form ..) _ _
      have a_v1771_3 : pair1_next.sl.v1771_3 d L tab t1 k r g1 g2 hR hin h10 = AccMath.accVec (rowF fl tab (wL L).val (2 * t1.val + 1) (2 * k.val + 1)) (offF fl (wL L).val (2 * t1.val + 1) (2 * k.val + 1)) 3 3 := by
        rw [show pair1_next.sl.v1771_3 d L tab t1 k r g1 g2 hR hin h10 = addf (pair1_next.sl.v1735_3 d L tab t1 k r g1 g2 hR hin h10) (pair1_next.sl.v1770_3 d L tab t1 k r g1 g2 hR hin h10) from rfl, a_v1735_3]
        exact acc_step d L fl tab (wL L).val (2 * t1.val + 1) (2 * k.val + 1) 1 _ hRB ⟨2, by decide⟩ ⟨3, by decide⟩ _ rfl _ hw_v1739_3 _ (k1_off95_form ..) _ _
      have a_v1807_3 : pair1_next.sl.v1807_3 d L tab t1 k r g1 g2 hR hin h10 = AccMath.accVec (rowF fl tab (wL L).val (2 * t1.val + 1) (2 * k.val + 1)) (offF fl (wL L).val (2 * t1.val + 1) (2 * k.val + 1)) 3 4 := by
        rw [show pair1_next.sl.v1807_3 d L tab t1 k r g1 g2 hR hin h10 = addf (pair1_next.sl.v1771_3 d L tab t1 k r g1 g2 hR hin h10) (pair1_next.sl.v1806_3 d L tab t1 k r g1 g2 hR hin h10) from rfl, a_v1771_3]
        exact acc_step d L fl tab (wL L).val (2 * t1.val + 1) (2 * k.val + 1) 1 _ hRB ⟨3, by decide⟩ ⟨3, by decide⟩ _ rfl _ hw_v1775_3 _ (k1_off96_form ..) _ _
      have a_v1843_3 : pair1_next.sl.v1843_3 d L tab t1 k r g1 g2 hR hin h10 = AccMath.accVec (rowF fl tab (wL L).val (2 * t1.val + 1) (2 * k.val + 1)) (offF fl (wL L).val (2 * t1.val + 1) (2 * k.val + 1)) 3 5 := by
        rw [show pair1_next.sl.v1843_3 d L tab t1 k r g1 g2 hR hin h10 = addf (pair1_next.sl.v1807_3 d L tab t1 k r g1 g2 hR hin h10) (pair1_next.sl.v1842_3 d L tab t1 k r g1 g2 hR hin h10) from rfl, a_v1807_3]
        exact acc_step d L fl tab (wL L).val (2 * t1.val + 1) (2 * k.val + 1) 1 _ hRB ⟨4, by decide⟩ ⟨3, by decide⟩ _ rfl _ hw_v1811_3 _ (k1_off97_form ..) _ _
      have a_v1879_3 : pair1_next.sl.v1879_3 d L tab t1 k r g1 g2 hR hin h10 = AccMath.accVec (rowF fl tab (wL L).val (2 * t1.val + 1) (2 * k.val + 1)) (offF fl (wL L).val (2 * t1.val + 1) (2 * k.val + 1)) 3 6 := by
        rw [show pair1_next.sl.v1879_3 d L tab t1 k r g1 g2 hR hin h10 = addf (pair1_next.sl.v1843_3 d L tab t1 k r g1 g2 hR hin h10) (pair1_next.sl.v1878_3 d L tab t1 k r g1 g2 hR hin h10) from rfl, a_v1843_3]
        exact acc_step d L fl tab (wL L).val (2 * t1.val + 1) (2 * k.val + 1) 1 _ hRB ⟨5, by decide⟩ ⟨3, by decide⟩ _ rfl _ hw_v1847_3 _ (k1_off98_form ..) _ _
      have a_v1915_3 : pair1_next.sl.v1915_3 d L tab t1 k r g1 g2 hR hin h10 = AccMath.accVec (rowF fl tab (wL L).val (2 * t1.val + 1) (2 * k.val + 1)) (offF fl (wL L).val (2 * t1.val + 1) (2 * k.val + 1)) 3 7 := by
        rw [show pair1_next.sl.v1915_3 d L tab t1 k r g1 g2 hR hin h10 = addf (pair1_next.sl.v1879_3 d L tab t1 k r g1 g2 hR hin h10) (pair1_next.sl.v1914_3 d L tab t1 k r g1 g2 hR hin h10) from rfl, a_v1879_3]
        exact acc_step d L fl tab (wL L).val (2 * t1.val + 1) (2 * k.val + 1) 1 _ hRB ⟨6, by decide⟩ ⟨3, by decide⟩ _ rfl _ hw_v1883_3 _ (k1_off99_form ..) _ _
      have a_v1951_3 : pair1_next.sl.v1951_3 d L tab t1 k r g1 g2 hR hin h10 = AccMath.accVec (rowF fl tab (wL L).val (2 * t1.val + 1) (2 * k.val + 1)) (offF fl (wL L).val (2 * t1.val + 1) (2 * k.val + 1)) 3 8 := by
        rw [show pair1_next.sl.v1951_3 d L tab t1 k r g1 g2 hR hin h10 = addf (pair1_next.sl.v1915_3 d L tab t1 k r g1 g2 hR hin h10) (pair1_next.sl.v1950_3 d L tab t1 k r g1 g2 hR hin h10) from rfl, a_v1915_3]
        exact acc_step d L fl tab (wL L).val (2 * t1.val + 1) (2 * k.val + 1) 1 _ hRB ⟨7, by decide⟩ ⟨3, by decide⟩ _ rfl _ hw_v1919_3 _ (k1_off100_form ..) _ _
      have a_v1987_3 : pair1_next.sl.v1987_3 d L tab t1 k r g1 g2 hR hin h10 = AccMath.accVec (rowF fl tab (wL L).val (2 * t1.val + 1) (2 * k.val + 1)) (offF fl (wL L).val (2 * t1.val + 1) (2 * k.val + 1)) 3 9 := by
        rw [show pair1_next.sl.v1987_3 d L tab t1 k r g1 g2 hR hin h10 = addf (pair1_next.sl.v1951_3 d L tab t1 k r g1 g2 hR hin h10) (pair1_next.sl.v1986_3 d L tab t1 k r g1 g2 hR hin h10) from rfl, a_v1951_3]
        exact acc_step d L fl tab (wL L).val (2 * t1.val + 1) (2 * k.val + 1) 1 _ hRB ⟨8, by decide⟩ ⟨3, by decide⟩ _ rfl _ hw_v1955_3 _ (k1_off101_form ..) _ _
      have a_v2023_3 : pair1_next.sl.v2023_3 d L tab t1 k r g1 g2 hR hin h10 = AccMath.accVec (rowF fl tab (wL L).val (2 * t1.val + 1) (2 * k.val + 1)) (offF fl (wL L).val (2 * t1.val + 1) (2 * k.val + 1)) 3 10 := by
        rw [show pair1_next.sl.v2023_3 d L tab t1 k r g1 g2 hR hin h10 = addf (pair1_next.sl.v1987_3 d L tab t1 k r g1 g2 hR hin h10) (pair1_next.sl.v2022_3 d L tab t1 k r g1 g2 hR hin h10) from rfl, a_v1987_3]
        exact acc_step d L fl tab (wL L).val (2 * t1.val + 1) (2 * k.val + 1) 1 _ hRB ⟨9, by decide⟩ ⟨3, by decide⟩ _ rfl _ hw_v1991_3 _ (k1_off102_form ..) _ _
      have a_v2059_3 : pair1_next.sl.v2059_3 d L tab t1 k r g1 g2 hR hin h10 = AccMath.accVec (rowF fl tab (wL L).val (2 * t1.val + 1) (2 * k.val + 1)) (offF fl (wL L).val (2 * t1.val + 1) (2 * k.val + 1)) 3 11 := by
        rw [show pair1_next.sl.v2059_3 d L tab t1 k r g1 g2 hR hin h10 = addf (pair1_next.sl.v2023_3 d L tab t1 k r g1 g2 hR hin h10) (pair1_next.sl.v2058_3 d L tab t1 k r g1 g2 hR hin h10) from rfl, a_v2023_3]
        exact acc_step d L fl tab (wL L).val (2 * t1.val + 1) (2 * k.val + 1) 1 _ hRB ⟨10, by decide⟩ ⟨3, by decide⟩ _ rfl _ hw_v2027_3 _ (k1_off103_form ..) _ _
      have a_v2095_3 : pair1_next.sl.v2095_3 d L tab t1 k r g1 g2 hR hin h10 = AccMath.accVec (rowF fl tab (wL L).val (2 * t1.val + 1) (2 * k.val + 1)) (offF fl (wL L).val (2 * t1.val + 1) (2 * k.val + 1)) 3 12 := by
        rw [show pair1_next.sl.v2095_3 d L tab t1 k r g1 g2 hR hin h10 = addf (pair1_next.sl.v2059_3 d L tab t1 k r g1 g2 hR hin h10) (pair1_next.sl.v2094_3 d L tab t1 k r g1 g2 hR hin h10) from rfl, a_v2059_3]
        exact acc_step d L fl tab (wL L).val (2 * t1.val + 1) (2 * k.val + 1) 1 _ hRB ⟨11, by decide⟩ ⟨3, by decide⟩ _ rfl _ hw_v2063_3 _ (k1_off104_form ..) _ _
      have a_v2131_3 : pair1_next.sl.v2131_3 d L tab t1 k r g1 g2 hR hin h10 = AccMath.accVec (rowF fl tab (wL L).val (2 * t1.val + 1) (2 * k.val + 1)) (offF fl (wL L).val (2 * t1.val + 1) (2 * k.val + 1)) 3 13 := by
        rw [show pair1_next.sl.v2131_3 d L tab t1 k r g1 g2 hR hin h10 = addf (pair1_next.sl.v2095_3 d L tab t1 k r g1 g2 hR hin h10) (pair1_next.sl.v2130_3 d L tab t1 k r g1 g2 hR hin h10) from rfl, a_v2095_3]
        exact acc_step d L fl tab (wL L).val (2 * t1.val + 1) (2 * k.val + 1) 1 _ hRB ⟨12, by decide⟩ ⟨3, by decide⟩ _ rfl _ hw_v2099_3 _ (k1_off105_form ..) _ _
      have a_v2167_3 : pair1_next.sl.v2167_3 d L tab t1 k r g1 g2 hR hin h10 = AccMath.accVec (rowF fl tab (wL L).val (2 * t1.val + 1) (2 * k.val + 1)) (offF fl (wL L).val (2 * t1.val + 1) (2 * k.val + 1)) 3 14 := by
        rw [show pair1_next.sl.v2167_3 d L tab t1 k r g1 g2 hR hin h10 = addf (pair1_next.sl.v2131_3 d L tab t1 k r g1 g2 hR hin h10) (pair1_next.sl.v2166_3 d L tab t1 k r g1 g2 hR hin h10) from rfl, a_v2131_3]
        exact acc_step d L fl tab (wL L).val (2 * t1.val + 1) (2 * k.val + 1) 1 _ hRB ⟨13, by decide⟩ ⟨3, by decide⟩ _ rfl _ hw_v2135_3 _ (k1_off106_form ..) _ _
      have a_v2203_3 : pair1_next.sl.v2203_3 d L tab t1 k r g1 g2 hR hin h10 = AccMath.accVec (rowF fl tab (wL L).val (2 * t1.val + 1) (2 * k.val + 1)) (offF fl (wL L).val (2 * t1.val + 1) (2 * k.val + 1)) 3 15 := by
        rw [show pair1_next.sl.v2203_3 d L tab t1 k r g1 g2 hR hin h10 = addf (pair1_next.sl.v2167_3 d L tab t1 k r g1 g2 hR hin h10) (pair1_next.sl.v2202_3 d L tab t1 k r g1 g2 hR hin h10) from rfl, a_v2167_3]
        exact acc_step d L fl tab (wL L).val (2 * t1.val + 1) (2 * k.val + 1) 1 _ hRB ⟨14, by decide⟩ ⟨3, by decide⟩ _ rfl _ hw_v2171_3 _ (k1_off107_form ..) _ _
      have a_v2239_3 : pair1_next.sl.v2239_3 d L tab t1 k r g1 g2 hR hin h10 = AccMath.accVec (rowF fl tab (wL L).val (2 * t1.val + 1) (2 * k.val + 1)) (offF fl (wL L).val (2 * t1.val + 1) (2 * k.val + 1)) 3 16 := by
        rw [show pair1_next.sl.v2239_3 d L tab t1 k r g1 g2 hR hin h10 = addf (pair1_next.sl.v2203_3 d L tab t1 k r g1 g2 hR hin h10) (pair1_next.sl.v2238_3 d L tab t1 k r g1 g2 hR hin h10) from rfl, a_v2203_3]
        exact acc_step d L fl tab (wL L).val (2 * t1.val + 1) (2 * k.val + 1) 1 _ hRB ⟨15, by decide⟩ ⟨3, by decide⟩ _ rfl _ hw_v2207_3 _ (k1_off108_form ..) _ _
      have a_v1699_4 : pair1_next.sl.v1699_4 d L tab t1 k r g1 g2 hR hin h10 = AccMath.accVec (rowF fl tab (wL L).val (2 * t1.val + 1) (2 * k.val + 1)) (offF fl (wL L).val (2 * t1.val + 1) (2 * k.val + 1)) 3 17 := by
        rw [show pair1_next.sl.v1699_4 d L tab t1 k r g1 g2 hR hin h10 = addf (pair1_next.sl.v2239_3 d L tab t1 k r g1 g2 hR hin h10) (pair1_next.sl.v1698_4 d L tab t1 k r g1 g2 hR hin h10) from rfl, a_v2239_3]
        exact acc_step d L fl tab (wL L).val (2 * t1.val + 1) (2 * k.val + 1) 1 _ hRB ⟨16, by decide⟩ ⟨3, by decide⟩ _ rfl _ hw_v1667_4 _ (k1_off93_form ..) _ _
      have a_v1735_4 : pair1_next.sl.v1735_4 d L tab t1 k r g1 g2 hR hin h10 = AccMath.accVec (rowF fl tab (wL L).val (2 * t1.val + 1) (2 * k.val + 1)) (offF fl (wL L).val (2 * t1.val + 1) (2 * k.val + 1)) 3 18 := by
        rw [show pair1_next.sl.v1735_4 d L tab t1 k r g1 g2 hR hin h10 = addf (pair1_next.sl.v1699_4 d L tab t1 k r g1 g2 hR hin h10) (pair1_next.sl.v1734_4 d L tab t1 k r g1 g2 hR hin h10) from rfl, a_v1699_4]
        exact acc_step d L fl tab (wL L).val (2 * t1.val + 1) (2 * k.val + 1) 1 _ hRB ⟨17, by decide⟩ ⟨3, by decide⟩ _ rfl _ hw_v1703_4 _ (k1_off94_form ..) _ _
      have a_v1771_4 : pair1_next.sl.v1771_4 d L tab t1 k r g1 g2 hR hin h10 = AccMath.accVec (rowF fl tab (wL L).val (2 * t1.val + 1) (2 * k.val + 1)) (offF fl (wL L).val (2 * t1.val + 1) (2 * k.val + 1)) 3 19 := by
        rw [show pair1_next.sl.v1771_4 d L tab t1 k r g1 g2 hR hin h10 = addf (pair1_next.sl.v1735_4 d L tab t1 k r g1 g2 hR hin h10) (pair1_next.sl.v1770_4 d L tab t1 k r g1 g2 hR hin h10) from rfl, a_v1735_4]
        exact acc_step d L fl tab (wL L).val (2 * t1.val + 1) (2 * k.val + 1) 1 _ hRB ⟨18, by decide⟩ ⟨3, by decide⟩ _ rfl _ hw_v1739_4 _ (k1_off95_form ..) _ _
      have a_v1807_4 : pair1_next.sl.v1807_4 d L tab t1 k r g1 g2 hR hin h10 = AccMath.accVec (rowF fl tab (wL L).val (2 * t1.val + 1) (2 * k.val + 1)) (offF fl (wL L).val (2 * t1.val + 1) (2 * k.val + 1)) 3 20 := by
        rw [show pair1_next.sl.v1807_4 d L tab t1 k r g1 g2 hR hin h10 = addf (pair1_next.sl.v1771_4 d L tab t1 k r g1 g2 hR hin h10) (pair1_next.sl.v1806_4 d L tab t1 k r g1 g2 hR hin h10) from rfl, a_v1771_4]
        exact acc_step d L fl tab (wL L).val (2 * t1.val + 1) (2 * k.val + 1) 1 _ hRB ⟨19, by decide⟩ ⟨3, by decide⟩ _ rfl _ hw_v1775_4 _ (k1_off96_form ..) _ _
      have a_v1843_4 : pair1_next.sl.v1843_4 d L tab t1 k r g1 g2 hR hin h10 = AccMath.accVec (rowF fl tab (wL L).val (2 * t1.val + 1) (2 * k.val + 1)) (offF fl (wL L).val (2 * t1.val + 1) (2 * k.val + 1)) 3 21 := by
        rw [show pair1_next.sl.v1843_4 d L tab t1 k r g1 g2 hR hin h10 = addf (pair1_next.sl.v1807_4 d L tab t1 k r g1 g2 hR hin h10) (pair1_next.sl.v1842_4 d L tab t1 k r g1 g2 hR hin h10) from rfl, a_v1807_4]
        exact acc_step d L fl tab (wL L).val (2 * t1.val + 1) (2 * k.val + 1) 1 _ hRB ⟨20, by decide⟩ ⟨3, by decide⟩ _ rfl _ hw_v1811_4 _ (k1_off97_form ..) _ _
      have a_v1879_4 : pair1_next.sl.v1879_4 d L tab t1 k r g1 g2 hR hin h10 = AccMath.accVec (rowF fl tab (wL L).val (2 * t1.val + 1) (2 * k.val + 1)) (offF fl (wL L).val (2 * t1.val + 1) (2 * k.val + 1)) 3 22 := by
        rw [show pair1_next.sl.v1879_4 d L tab t1 k r g1 g2 hR hin h10 = addf (pair1_next.sl.v1843_4 d L tab t1 k r g1 g2 hR hin h10) (pair1_next.sl.v1878_4 d L tab t1 k r g1 g2 hR hin h10) from rfl, a_v1843_4]
        exact acc_step d L fl tab (wL L).val (2 * t1.val + 1) (2 * k.val + 1) 1 _ hRB ⟨21, by decide⟩ ⟨3, by decide⟩ _ rfl _ hw_v1847_4 _ (k1_off98_form ..) _ _
      have a_v1915_4 : pair1_next.sl.v1915_4 d L tab t1 k r g1 g2 hR hin h10 = AccMath.accVec (rowF fl tab (wL L).val (2 * t1.val + 1) (2 * k.val + 1)) (offF fl (wL L).val (2 * t1.val + 1) (2 * k.val + 1)) 3 23 := by
        rw [show pair1_next.sl.v1915_4 d L tab t1 k r g1 g2 hR hin h10 = addf (pair1_next.sl.v1879_4 d L tab t1 k r g1 g2 hR hin h10) (pair1_next.sl.v1914_4 d L tab t1 k r g1 g2 hR hin h10) from rfl, a_v1879_4]
        exact acc_step d L fl tab (wL L).val (2 * t1.val + 1) (2 * k.val + 1) 1 _ hRB ⟨22, by decide⟩ ⟨3, by decide⟩ _ rfl _ hw_v1883_4 _ (k1_off99_form ..) _ _
      have a_v1951_4 : pair1_next.sl.v1951_4 d L tab t1 k r g1 g2 hR hin h10 = AccMath.accVec (rowF fl tab (wL L).val (2 * t1.val + 1) (2 * k.val + 1)) (offF fl (wL L).val (2 * t1.val + 1) (2 * k.val + 1)) 3 24 := by
        rw [show pair1_next.sl.v1951_4 d L tab t1 k r g1 g2 hR hin h10 = addf (pair1_next.sl.v1915_4 d L tab t1 k r g1 g2 hR hin h10) (pair1_next.sl.v1950_4 d L tab t1 k r g1 g2 hR hin h10) from rfl, a_v1915_4]
        exact acc_step d L fl tab (wL L).val (2 * t1.val + 1) (2 * k.val + 1) 1 _ hRB ⟨23, by decide⟩ ⟨3, by decide⟩ _ rfl _ hw_v1919_4 _ (k1_off100_form ..) _ _
      have a_v1987_4 : pair1_next.sl.v1987_4 d L tab t1 k r g1 g2 hR hin h10 = AccMath.accVec (rowF fl tab (wL L).val (2 * t1.val + 1) (2 * k.val + 1)) (offF fl (wL L).val (2 * t1.val + 1) (2 * k.val + 1)) 3 25 := by
        rw [show pair1_next.sl.v1987_4 d L tab t1 k r g1 g2 hR hin h10 = addf (pair1_next.sl.v1951_4 d L tab t1 k r g1 g2 hR hin h10) (pair1_next.sl.v1986_4 d L tab t1 k r g1 g2 hR hin h10) from rfl, a_v1951_4]
        exact acc_step d L fl tab (wL L).val (2 * t1.val + 1) (2 * k.val + 1) 1 _ hRB ⟨24, by decide⟩ ⟨3, by decide⟩ _ rfl _ hw_v1955_4 _ (k1_off101_form ..) _ _
      have a_v2023_4 : pair1_next.sl.v2023_4 d L tab t1 k r g1 g2 hR hin h10 = AccMath.accVec (rowF fl tab (wL L).val (2 * t1.val + 1) (2 * k.val + 1)) (offF fl (wL L).val (2 * t1.val + 1) (2 * k.val + 1)) 3 26 := by
        rw [show pair1_next.sl.v2023_4 d L tab t1 k r g1 g2 hR hin h10 = addf (pair1_next.sl.v1987_4 d L tab t1 k r g1 g2 hR hin h10) (pair1_next.sl.v2022_4 d L tab t1 k r g1 g2 hR hin h10) from rfl, a_v1987_4]
        exact acc_step d L fl tab (wL L).val (2 * t1.val + 1) (2 * k.val + 1) 1 _ hRB ⟨25, by decide⟩ ⟨3, by decide⟩ _ rfl _ hw_v1991_4 _ (k1_off102_form ..) _ _
      have a_v2059_4 : pair1_next.sl.v2059_4 d L tab t1 k r g1 g2 hR hin h10 = AccMath.accVec (rowF fl tab (wL L).val (2 * t1.val + 1) (2 * k.val + 1)) (offF fl (wL L).val (2 * t1.val + 1) (2 * k.val + 1)) 3 27 := by
        rw [show pair1_next.sl.v2059_4 d L tab t1 k r g1 g2 hR hin h10 = addf (pair1_next.sl.v2023_4 d L tab t1 k r g1 g2 hR hin h10) (pair1_next.sl.v2058_4 d L tab t1 k r g1 g2 hR hin h10) from rfl, a_v2023_4]
        exact acc_step d L fl tab (wL L).val (2 * t1.val + 1) (2 * k.val + 1) 1 _ hRB ⟨26, by decide⟩ ⟨3, by decide⟩ _ rfl _ hw_v2027_4 _ (k1_off103_form ..) _ _
      have a_v2095_4 : pair1_next.sl.v2095_4 d L tab t1 k r g1 g2 hR hin h10 = AccMath.accVec (rowF fl tab (wL L).val (2 * t1.val + 1) (2 * k.val + 1)) (offF fl (wL L).val (2 * t1.val + 1) (2 * k.val + 1)) 3 28 := by
        rw [show pair1_next.sl.v2095_4 d L tab t1 k r g1 g2 hR hin h10 = addf (pair1_next.sl.v2059_4 d L tab t1 k r g1 g2 hR hin h10) (pair1_next.sl.v2094_4 d L tab t1 k r g1 g2 hR hin h10) from rfl, a_v2059_4]
        exact acc_step d L fl tab (wL L).val (2 * t1.val + 1) (2 * k.val + 1) 1 _ hRB ⟨27, by decide⟩ ⟨3, by decide⟩ _ rfl _ hw_v2063_4 _ (k1_off104_form ..) _ _
      have a_v2131_4 : pair1_next.sl.v2131_4 d L tab t1 k r g1 g2 hR hin h10 = AccMath.accVec (rowF fl tab (wL L).val (2 * t1.val + 1) (2 * k.val + 1)) (offF fl (wL L).val (2 * t1.val + 1) (2 * k.val + 1)) 3 29 := by
        rw [show pair1_next.sl.v2131_4 d L tab t1 k r g1 g2 hR hin h10 = addf (pair1_next.sl.v2095_4 d L tab t1 k r g1 g2 hR hin h10) (pair1_next.sl.v2130_4 d L tab t1 k r g1 g2 hR hin h10) from rfl, a_v2095_4]
        exact acc_step d L fl tab (wL L).val (2 * t1.val + 1) (2 * k.val + 1) 1 _ hRB ⟨28, by decide⟩ ⟨3, by decide⟩ _ rfl _ hw_v2099_4 _ (k1_off105_form ..) _ _
      have a_v2167_4 : pair1_next.sl.v2167_4 d L tab t1 k r g1 g2 hR hin h10 = AccMath.accVec (rowF fl tab (wL L).val (2 * t1.val + 1) (2 * k.val + 1)) (offF fl (wL L).val (2 * t1.val + 1) (2 * k.val + 1)) 3 30 := by
        rw [show pair1_next.sl.v2167_4 d L tab t1 k r g1 g2 hR hin h10 = addf (pair1_next.sl.v2131_4 d L tab t1 k r g1 g2 hR hin h10) (pair1_next.sl.v2166_4 d L tab t1 k r g1 g2 hR hin h10) from rfl, a_v2131_4]
        exact acc_step d L fl tab (wL L).val (2 * t1.val + 1) (2 * k.val + 1) 1 _ hRB ⟨29, by decide⟩ ⟨3, by decide⟩ _ rfl _ hw_v2135_4 _ (k1_off106_form ..) _ _
      have a_v2203_4 : pair1_next.sl.v2203_4 d L tab t1 k r g1 g2 hR hin h10 = AccMath.accVec (rowF fl tab (wL L).val (2 * t1.val + 1) (2 * k.val + 1)) (offF fl (wL L).val (2 * t1.val + 1) (2 * k.val + 1)) 3 31 := by
        rw [show pair1_next.sl.v2203_4 d L tab t1 k r g1 g2 hR hin h10 = addf (pair1_next.sl.v2167_4 d L tab t1 k r g1 g2 hR hin h10) (pair1_next.sl.v2202_4 d L tab t1 k r g1 g2 hR hin h10) from rfl, a_v2167_4]
        exact acc_step d L fl tab (wL L).val (2 * t1.val + 1) (2 * k.val + 1) 1 _ hRB ⟨30, by decide⟩ ⟨3, by decide⟩ _ rfl _ hw_v2171_4 _ (k1_off107_form ..) _ _
      have a_v2239_4 : pair1_next.sl.v2239_4 d L tab t1 k r g1 g2 hR hin h10 = AccMath.accVec (rowF fl tab (wL L).val (2 * t1.val + 1) (2 * k.val + 1)) (offF fl (wL L).val (2 * t1.val + 1) (2 * k.val + 1)) 3 32 := by
        rw [show pair1_next.sl.v2239_4 d L tab t1 k r g1 g2 hR hin h10 = addf (pair1_next.sl.v2203_4 d L tab t1 k r g1 g2 hR hin h10) (pair1_next.sl.v2238_4 d L tab t1 k r g1 g2 hR hin h10) from rfl, a_v2203_4]
        exact acc_step d L fl tab (wL L).val (2 * t1.val + 1) (2 * k.val + 1) 1 _ hRB ⟨31, by decide⟩ ⟨3, by decide⟩ _ rfl _ hw_v2207_4 _ (k1_off108_form ..) _ _
      have a_v1699_5 : pair1_next.sl.v1699_5 d L tab t1 k r g1 g2 hR hin h10 = AccMath.accVec (rowF fl tab (wL L).val (2 * t1.val + 1) (2 * k.val + 1)) (offF fl (wL L).val (2 * t1.val + 1) (2 * k.val + 1)) 3 33 := by
        rw [show pair1_next.sl.v1699_5 d L tab t1 k r g1 g2 hR hin h10 = addf (pair1_next.sl.v2239_4 d L tab t1 k r g1 g2 hR hin h10) (pair1_next.sl.v1698_5 d L tab t1 k r g1 g2 hR hin h10) from rfl, a_v2239_4]
        exact acc_step d L fl tab (wL L).val (2 * t1.val + 1) (2 * k.val + 1) 1 _ hRB ⟨32, by decide⟩ ⟨3, by decide⟩ _ rfl _ hw_v1667_5 _ (k1_off93_form ..) _ _
      have a_v1735_5 : pair1_next.sl.v1735_5 d L tab t1 k r g1 g2 hR hin h10 = AccMath.accVec (rowF fl tab (wL L).val (2 * t1.val + 1) (2 * k.val + 1)) (offF fl (wL L).val (2 * t1.val + 1) (2 * k.val + 1)) 3 34 := by
        rw [show pair1_next.sl.v1735_5 d L tab t1 k r g1 g2 hR hin h10 = addf (pair1_next.sl.v1699_5 d L tab t1 k r g1 g2 hR hin h10) (pair1_next.sl.v1734_5 d L tab t1 k r g1 g2 hR hin h10) from rfl, a_v1699_5]
        exact acc_step d L fl tab (wL L).val (2 * t1.val + 1) (2 * k.val + 1) 1 _ hRB ⟨33, by decide⟩ ⟨3, by decide⟩ _ rfl _ hw_v1703_5 _ (k1_off94_form ..) _ _
      have a_v1771_5 : pair1_next.sl.v1771_5 d L tab t1 k r g1 g2 hR hin h10 = AccMath.accVec (rowF fl tab (wL L).val (2 * t1.val + 1) (2 * k.val + 1)) (offF fl (wL L).val (2 * t1.val + 1) (2 * k.val + 1)) 3 35 := by
        rw [show pair1_next.sl.v1771_5 d L tab t1 k r g1 g2 hR hin h10 = addf (pair1_next.sl.v1735_5 d L tab t1 k r g1 g2 hR hin h10) (pair1_next.sl.v1770_5 d L tab t1 k r g1 g2 hR hin h10) from rfl, a_v1735_5]
        exact acc_step d L fl tab (wL L).val (2 * t1.val + 1) (2 * k.val + 1) 1 _ hRB ⟨34, by decide⟩ ⟨3, by decide⟩ _ rfl _ hw_v1739_5 _ (k1_off95_form ..) _ _
      have a_v1807_5 : pair1_next.sl.v1807_5 d L tab t1 k r g1 g2 hR hin h10 = AccMath.accVec (rowF fl tab (wL L).val (2 * t1.val + 1) (2 * k.val + 1)) (offF fl (wL L).val (2 * t1.val + 1) (2 * k.val + 1)) 3 36 := by
        rw [show pair1_next.sl.v1807_5 d L tab t1 k r g1 g2 hR hin h10 = addf (pair1_next.sl.v1771_5 d L tab t1 k r g1 g2 hR hin h10) (pair1_next.sl.v1806_5 d L tab t1 k r g1 g2 hR hin h10) from rfl, a_v1771_5]
        exact acc_step d L fl tab (wL L).val (2 * t1.val + 1) (2 * k.val + 1) 1 _ hRB ⟨35, by decide⟩ ⟨3, by decide⟩ _ rfl _ hw_v1775_5 _ (k1_off96_form ..) _ _
      have a_v1843_5 : pair1_next.sl.v1843_5 d L tab t1 k r g1 g2 hR hin h10 = AccMath.accVec (rowF fl tab (wL L).val (2 * t1.val + 1) (2 * k.val + 1)) (offF fl (wL L).val (2 * t1.val + 1) (2 * k.val + 1)) 3 37 := by
        rw [show pair1_next.sl.v1843_5 d L tab t1 k r g1 g2 hR hin h10 = addf (pair1_next.sl.v1807_5 d L tab t1 k r g1 g2 hR hin h10) (pair1_next.sl.v1842_5 d L tab t1 k r g1 g2 hR hin h10) from rfl, a_v1807_5]
        exact acc_step d L fl tab (wL L).val (2 * t1.val + 1) (2 * k.val + 1) 1 _ hRB ⟨36, by decide⟩ ⟨3, by decide⟩ _ rfl _ hw_v1811_5 _ (k1_off97_form ..) _ _
      have a_v1879_5 : pair1_next.sl.v1879_5 d L tab t1 k r g1 g2 hR hin h10 = AccMath.accVec (rowF fl tab (wL L).val (2 * t1.val + 1) (2 * k.val + 1)) (offF fl (wL L).val (2 * t1.val + 1) (2 * k.val + 1)) 3 38 := by
        rw [show pair1_next.sl.v1879_5 d L tab t1 k r g1 g2 hR hin h10 = addf (pair1_next.sl.v1843_5 d L tab t1 k r g1 g2 hR hin h10) (pair1_next.sl.v1878_5 d L tab t1 k r g1 g2 hR hin h10) from rfl, a_v1843_5]
        exact acc_step d L fl tab (wL L).val (2 * t1.val + 1) (2 * k.val + 1) 1 _ hRB ⟨37, by decide⟩ ⟨3, by decide⟩ _ rfl _ hw_v1847_5 _ (k1_off98_form ..) _ _
      have a_v1915_5 : pair1_next.sl.v1915_5 d L tab t1 k r g1 g2 hR hin h10 = AccMath.accVec (rowF fl tab (wL L).val (2 * t1.val + 1) (2 * k.val + 1)) (offF fl (wL L).val (2 * t1.val + 1) (2 * k.val + 1)) 3 39 := by
        rw [show pair1_next.sl.v1915_5 d L tab t1 k r g1 g2 hR hin h10 = addf (pair1_next.sl.v1879_5 d L tab t1 k r g1 g2 hR hin h10) (pair1_next.sl.v1914_5 d L tab t1 k r g1 g2 hR hin h10) from rfl, a_v1879_5]
        exact acc_step d L fl tab (wL L).val (2 * t1.val + 1) (2 * k.val + 1) 1 _ hRB ⟨38, by decide⟩ ⟨3, by decide⟩ _ rfl _ hw_v1883_5 _ (k1_off99_form ..) _ _
      have a_v1951_5 : pair1_next.sl.v1951_5 d L tab t1 k r g1 g2 hR hin h10 = AccMath.accVec (rowF fl tab (wL L).val (2 * t1.val + 1) (2 * k.val + 1)) (offF fl (wL L).val (2 * t1.val + 1) (2 * k.val + 1)) 3 40 := by
        rw [show pair1_next.sl.v1951_5 d L tab t1 k r g1 g2 hR hin h10 = addf (pair1_next.sl.v1915_5 d L tab t1 k r g1 g2 hR hin h10) (pair1_next.sl.v1950_5 d L tab t1 k r g1 g2 hR hin h10) from rfl, a_v1915_5]
        exact acc_step d L fl tab (wL L).val (2 * t1.val + 1) (2 * k.val + 1) 1 _ hRB ⟨39, by decide⟩ ⟨3, by decide⟩ _ rfl _ hw_v1919_5 _ (k1_off100_form ..) _ _
      have a_v1987_5 : pair1_next.sl.v1987_5 d L tab t1 k r g1 g2 hR hin h10 = AccMath.accVec (rowF fl tab (wL L).val (2 * t1.val + 1) (2 * k.val + 1)) (offF fl (wL L).val (2 * t1.val + 1) (2 * k.val + 1)) 3 41 := by
        rw [show pair1_next.sl.v1987_5 d L tab t1 k r g1 g2 hR hin h10 = addf (pair1_next.sl.v1951_5 d L tab t1 k r g1 g2 hR hin h10) (pair1_next.sl.v1986_5 d L tab t1 k r g1 g2 hR hin h10) from rfl, a_v1951_5]
        exact acc_step d L fl tab (wL L).val (2 * t1.val + 1) (2 * k.val + 1) 1 _ hRB ⟨40, by decide⟩ ⟨3, by decide⟩ _ rfl _ hw_v1955_5 _ (k1_off101_form ..) _ _
      have a_v2023_5 : pair1_next.sl.v2023_5 d L tab t1 k r g1 g2 hR hin h10 = AccMath.accVec (rowF fl tab (wL L).val (2 * t1.val + 1) (2 * k.val + 1)) (offF fl (wL L).val (2 * t1.val + 1) (2 * k.val + 1)) 3 42 := by
        rw [show pair1_next.sl.v2023_5 d L tab t1 k r g1 g2 hR hin h10 = addf (pair1_next.sl.v1987_5 d L tab t1 k r g1 g2 hR hin h10) (pair1_next.sl.v2022_5 d L tab t1 k r g1 g2 hR hin h10) from rfl, a_v1987_5]
        exact acc_step d L fl tab (wL L).val (2 * t1.val + 1) (2 * k.val + 1) 1 _ hRB ⟨41, by decide⟩ ⟨3, by decide⟩ _ rfl _ hw_v1991_5 _ (k1_off102_form ..) _ _
      have a_v2059_5 : pair1_next.sl.v2059_5 d L tab t1 k r g1 g2 hR hin h10 = AccMath.accVec (rowF fl tab (wL L).val (2 * t1.val + 1) (2 * k.val + 1)) (offF fl (wL L).val (2 * t1.val + 1) (2 * k.val + 1)) 3 43 := by
        rw [show pair1_next.sl.v2059_5 d L tab t1 k r g1 g2 hR hin h10 = addf (pair1_next.sl.v2023_5 d L tab t1 k r g1 g2 hR hin h10) (pair1_next.sl.v2058_5 d L tab t1 k r g1 g2 hR hin h10) from rfl, a_v2023_5]
        exact acc_step d L fl tab (wL L).val (2 * t1.val + 1) (2 * k.val + 1) 1 _ hRB ⟨42, by decide⟩ ⟨3, by decide⟩ _ rfl _ hw_v2027_5 _ (k1_off103_form ..) _ _
      have a_v2095_5 : pair1_next.sl.v2095_5 d L tab t1 k r g1 g2 hR hin h10 = AccMath.accVec (rowF fl tab (wL L).val (2 * t1.val + 1) (2 * k.val + 1)) (offF fl (wL L).val (2 * t1.val + 1) (2 * k.val + 1)) 3 44 := by
        rw [show pair1_next.sl.v2095_5 d L tab t1 k r g1 g2 hR hin h10 = addf (pair1_next.sl.v2059_5 d L tab t1 k r g1 g2 hR hin h10) (pair1_next.sl.v2094_5 d L tab t1 k r g1 g2 hR hin h10) from rfl, a_v2059_5]
        exact acc_step d L fl tab (wL L).val (2 * t1.val + 1) (2 * k.val + 1) 1 _ hRB ⟨43, by decide⟩ ⟨3, by decide⟩ _ rfl _ hw_v2063_5 _ (k1_off104_form ..) _ _
      have a_v2131_5 : pair1_next.sl.v2131_5 d L tab t1 k r g1 g2 hR hin h10 = AccMath.accVec (rowF fl tab (wL L).val (2 * t1.val + 1) (2 * k.val + 1)) (offF fl (wL L).val (2 * t1.val + 1) (2 * k.val + 1)) 3 45 := by
        rw [show pair1_next.sl.v2131_5 d L tab t1 k r g1 g2 hR hin h10 = addf (pair1_next.sl.v2095_5 d L tab t1 k r g1 g2 hR hin h10) (pair1_next.sl.v2130_5 d L tab t1 k r g1 g2 hR hin h10) from rfl, a_v2095_5]
        exact acc_step d L fl tab (wL L).val (2 * t1.val + 1) (2 * k.val + 1) 1 _ hRB ⟨44, by decide⟩ ⟨3, by decide⟩ _ rfl _ hw_v2099_5 _ (k1_off105_form ..) _ _
      have a_v2167_5 : pair1_next.sl.v2167_5 d L tab t1 k r g1 g2 hR hin h10 = AccMath.accVec (rowF fl tab (wL L).val (2 * t1.val + 1) (2 * k.val + 1)) (offF fl (wL L).val (2 * t1.val + 1) (2 * k.val + 1)) 3 46 := by
        rw [show pair1_next.sl.v2167_5 d L tab t1 k r g1 g2 hR hin h10 = addf (pair1_next.sl.v2131_5 d L tab t1 k r g1 g2 hR hin h10) (pair1_next.sl.v2166_5 d L tab t1 k r g1 g2 hR hin h10) from rfl, a_v2131_5]
        exact acc_step d L fl tab (wL L).val (2 * t1.val + 1) (2 * k.val + 1) 1 _ hRB ⟨45, by decide⟩ ⟨3, by decide⟩ _ rfl _ hw_v2135_5 _ (k1_off106_form ..) _ _
      have a_v2203_5 : pair1_next.sl.v2203_5 d L tab t1 k r g1 g2 hR hin h10 = AccMath.accVec (rowF fl tab (wL L).val (2 * t1.val + 1) (2 * k.val + 1)) (offF fl (wL L).val (2 * t1.val + 1) (2 * k.val + 1)) 3 47 := by
        rw [show pair1_next.sl.v2203_5 d L tab t1 k r g1 g2 hR hin h10 = addf (pair1_next.sl.v2167_5 d L tab t1 k r g1 g2 hR hin h10) (pair1_next.sl.v2202_5 d L tab t1 k r g1 g2 hR hin h10) from rfl, a_v2167_5]
        exact acc_step d L fl tab (wL L).val (2 * t1.val + 1) (2 * k.val + 1) 1 _ hRB ⟨46, by decide⟩ ⟨3, by decide⟩ _ rfl _ hw_v2171_5 _ (k1_off107_form ..) _ _
      have a_v2239_5 : pair1_next.sl.v2239_5 d L tab t1 k r g1 g2 hR hin h10 = AccMath.accVec (rowF fl tab (wL L).val (2 * t1.val + 1) (2 * k.val + 1)) (offF fl (wL L).val (2 * t1.val + 1) (2 * k.val + 1)) 3 48 := by
        rw [show pair1_next.sl.v2239_5 d L tab t1 k r g1 g2 hR hin h10 = addf (pair1_next.sl.v2203_5 d L tab t1 k r g1 g2 hR hin h10) (pair1_next.sl.v2238_5 d L tab t1 k r g1 g2 hR hin h10) from rfl, a_v2203_5]
        exact acc_step d L fl tab (wL L).val (2 * t1.val + 1) (2 * k.val + 1) 1 _ hRB ⟨47, by decide⟩ ⟨3, by decide⟩ _ rfl _ hw_v2207_5 _ (k1_off108_form ..) _ _
      have a_v1604 : pair1_next.sl.v1604 d L tab t1 k r g1 g2 hR hin h10 = AccMath.accVec (rowF fl tab (wL L).val (2 * t1.val + 1) (2 * k.val + 1)) (offF fl (wL L).val (2 * t1.val + 1) (2 * k.val + 1)) 3 49 := by
        rw [show pair1_next.sl.v1604 d L tab t1 k r g1 g2 hR hin h10 = addf (pair1_next.sl.v2239_5 d L tab t1 k r g1 g2 hR hin h10) (pair1_next.sl.v1603 d L tab t1 k r g1 g2 hR hin h10) from rfl, a_v2239_5]
        exact acc_step d L fl tab (wL L).val (2 * t1.val + 1) (2 * k.val + 1) 1 _ hRB ⟨48, by decide⟩ ⟨3, by decide⟩ _ rfl _ hw_v1572 _ (k1_off110_form ..) _ _
      have a_v1638 : pair1_next.sl.v1638 d L tab t1 k r g1 g2 hR hin h10 = AccMath.accVec (rowF fl tab (wL L).val (2 * t1.val + 1) (2 * k.val + 1)) (offF fl (wL L).val (2 * t1.val + 1) (2 * k.val + 1)) 3 50 := by
        rw [show pair1_next.sl.v1638 d L tab t1 k r g1 g2 hR hin h10 = addf (pair1_next.sl.v1604 d L tab t1 k r g1 g2 hR hin h10) (pair1_next.sl.v1637 d L tab t1 k r g1 g2 hR hin h10) from rfl, a_v1604]
        exact acc_step d L fl tab (wL L).val (2 * t1.val + 1) (2 * k.val + 1) 1 _ hRB ⟨49, by decide⟩ ⟨3, by decide⟩ _ rfl _ hw_v1606 _ (k1_off111_form ..) _ _
      have hP_v1527 : ∀ x : S1x1x16.Idx, pair1_next.sl.v1527 d L tab k r g1 g2 hR hin x = Spec.bagPartial fl tab (128 * (wL L).val + 16 * (2 * t1.val + 1) + (2 * k.val)) (16 * 0 + (x 2).val) 50 := fun x => by
        show shapeCast S1x1x16 (pair1_next.sl.v1498 d L tab k r g1 g2 hR hin) _ x = _
        rw [a_v1498]
        exact payload_ok fl tab (wL L).val (2 * t1.val + 1) (2 * k.val) ⟨0, by decide⟩ _ x
      have hP_v1532 : ∀ x : S1x1x16.Idx, pair1_next.sl.v1532 d L tab k r g1 g2 hR hin x = Spec.bagPartial fl tab (128 * (wL L).val + 16 * (2 * t1.val + 1) + (2 * k.val)) (16 * 1 + (x 2).val) 50 := fun x => by
        show shapeCast S1x1x16 (pair1_next.sl.v1506 d L tab k r g1 g2 hR hin) _ x = _
        rw [a_v1506]
        exact payload_ok fl tab (wL L).val (2 * t1.val + 1) (2 * k.val) ⟨1, by decide⟩ _ x
      have hP_v1537 : ∀ x : S1x1x16.Idx, pair1_next.sl.v1537 d L tab k r g1 g2 hR hin x = Spec.bagPartial fl tab (128 * (wL L).val + 16 * (2 * t1.val + 1) + (2 * k.val)) (16 * 2 + (x 2).val) 50 := fun x => by
        show shapeCast S1x1x16 (pair1_next.sl.v1514 d L tab k r g1 g2 hR hin) _ x = _
        rw [a_v1514]
        exact payload_ok fl tab (wL L).val (2 * t1.val + 1) (2 * k.val) ⟨2, by decide⟩ _ x
      have hP_v1542 : ∀ x : S1x1x16.Idx, pair1_next.sl.v1542 d L tab k r g1 g2 hR hin x = Spec.bagPartial fl tab (128 * (wL L).val + 16 * (2 * t1.val + 1) + (2 * k.val)) (16 * 3 + (x 2).val) 50 := fun x => by
        show shapeCast S1x1x16 (pair1_next.sl.v1522 d L tab k r g1 g2 hR hin) _ x = _
        rw [a_v1522]
        exact payload_ok fl tab (wL L).val (2 * t1.val + 1) (2 * k.val) ⟨3, by decide⟩ _ x
      have hP_v1643 : ∀ x : S1x1x16.Idx, pair1_next.sl.v1643 d L tab t1 k r g1 g2 hR hin h10 x = Spec.bagPartial fl tab (128 * (wL L).val + 16 * (2 * t1.val + 1) + (2 * k.val + 1)) (16 * 0 + (x 2).val) 50 := fun x => by
        show shapeCast S1x1x16 (pair1_next.sl.v1614 d L tab t1 k r g1 g2 hR hin h10) _ x = _
        rw [a_v1614]
        exact payload_ok fl tab (wL L).val (2 * t1.val + 1) (2 * k.val + 1) ⟨0, by decide⟩ _ x
      have hP_v1648 : ∀ x : S1x1x16.Idx, pair1_next.sl.v1648 d L tab t1 k r g1 g2 hR hin h10 x = Spec.bagPartial fl tab (128 * (wL L).val + 16 * (2 * t1.val + 1) + (2 * k.val + 1)) (16 * 1 + (x 2).val) 50 := fun x => by
        show shapeCast S1x1x16 (pair1_next.sl.v1622 d L tab t1 k r g1 g2 hR hin h10) _ x = _
        rw [a_v1622]
        exact payload_ok fl tab (wL L).val (2 * t1.val + 1) (2 * k.val + 1) ⟨1, by decide⟩ _ x
      have hP_v1653 : ∀ x : S1x1x16.Idx, pair1_next.sl.v1653 d L tab t1 k r g1 g2 hR hin h10 x = Spec.bagPartial fl tab (128 * (wL L).val + 16 * (2 * t1.val + 1) + (2 * k.val + 1)) (16 * 2 + (x 2).val) 50 := fun x => by
        show shapeCast S1x1x16 (pair1_next.sl.v1630 d L tab t1 k r g1 g2 hR hin h10) _ x = _
        rw [a_v1630]
        exact payload_ok fl tab (wL L).val (2 * t1.val + 1) (2 * k.val + 1) ⟨2, by decide⟩ _ x
      have hP_v1658 : ∀ x : S1x1x16.Idx, pair1_next.sl.v1658 d L tab t1 k r g1 g2 hR hin h10 x = Spec.bagPartial fl tab (128 * (wL L).val + 16 * (2 * t1.val + 1) + (2 * k.val + 1)) (16 * 3 + (x 2).val) 50 := fun x => by
        show shapeCast S1x1x16 (pair1_next.sl.v1638 d L tab t1 k r g1 g2 hR hin h10) _ x = _
        rw [a_v1638]
        exact payload_ok fl tab (wL L).val (2 * t1.val + 1) (2 * k.val + 1) ⟨3, by decide⟩ _ x
      have hK0 := (WbV_iff_WbK d L fl tab (wL L).val (2 * t1.val + 1) 1 (2 * k.val) wb).mp hwb
      have kA := WbK_bag d L fl tab (wL L).val (2 * t1.val + 1) 1 _ wb hK0 ⟨2 * k.val, by omega⟩ (k1_off85 k) (k1_off86 k) (k1_off87 k) (k1_off88 k)
        (k1_off85_eq k) (k1_off86_eq k) (k1_off87_eq k) (k1_off88_eq k) (k1_off85_inb k) (k1_off86_inb k) (k1_off87_inb k) (k1_off88_inb k) _ _ _ _
        hP_v1527 hP_v1532 hP_v1537 hP_v1542
      have kB := WbK_bag d L fl tab (wL L).val (2 * t1.val + 1) 1 _ _ kA ⟨2 * k.val + 1, by omega⟩ (k1_off112 k) (k1_off113 k) (k1_off114 k) (k1_off115 k)
        (k1_off112_eq k) (k1_off113_eq k) (k1_off114_eq k) (k1_off115_eq k) (k1_off112_inb k) (k1_off113_inb k) (k1_off114_inb k) (k1_off115_inb k) _ _ _ _
        hP_v1643 hP_v1648 hP_v1653 hP_v1658
      rw [WbV_iff_WbK]
      intro g c hg
      have hg2 : g.val < 2 * (k.val + 1) := hg
      refine kB g c ?_
      have hg' : g.val < 2 * k.val ∨ g.val = 2 * k.val ∨ g.val = 2 * k.val + 1 := by omega
      rcases hg' with h | h | h
      · exact .inl (.inl h)
      · exact .inl (.inr (Fin.ext h))
      · exact .inr (Fin.ext h)

end Tile

end Cert.Proof.Bag

end
-- ==== Proof.TilePair1c.lean ====
/-
  One trip of an odd block's pair loop on a vector subcore, the last trip (`k = 7`) of the task's last block (`t1 = 3`): from what holds before trip `k`
  to the state with nothing in flight.

  The trip waits for the gather of bag `2 k` into slot 0, starts the gather of bag `2 k + 1` into slot 1 (its list in the second
  half of the row-number scratch), sums bag `2 k`'s fifty rows into row `2 k` of slot 1 of the write-back scratch, waits for the
  second gather, starts nothing more, and sums bag `2 k + 1` into row `2 k + 1`. Each accumulator,
  fifty rows on, is the bag's partial sum of fifty terms at its sixteen columns: row by row, a sixteen-lane load of the
  gathered row at its column offset adds the row's term.
-/
import proofs.«203835_g19404662243951_cont_8to1_399_35_alg».proof.Proof.TilePre
import proofs.«203835_g19404662243951_cont_8to1_399_35_alg».proof.Proof.Pay
import proofs.«203835_g19404662243951_cont_8to1_399_35_alg».proof.Proof.TileChk
import proofs.«203835_g19404662243951_cont_8to1_399_35_alg».proof.Proof.TileMath
import proofs.«203835_g19404662243951_cont_8to1_399_35_alg».proof.Proof.TileInv
import proofs.«203835_g19404662243951_cont_8to1_399_35_alg».proof.Proof.TileInv1
import proofs.«203835_g19404662243951_cont_8to1_399_35_alg».proof.Proof.Gen.KernelIdeal.Skeleton
import proofs.«203835_g19404662243951_cont_8to1_399_35_alg».proof.Proof.TilePairVal
import proofs.«203835_g19404662243951_cont_8to1_399_35_alg».proof.Proof.TileChk1
import Idealize.ShloMosaic.Lib.Tactic

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid1.Coords)

set_option maxHeartbeats 4000000 in
theorem pair1_last (fl : IVec Spec.SFlat 32) (qt : PosShare TreeShare) (tab : FVec F Spec.STab .f32) (O : CellTallies nD τ sig (HIx 1))
    (W0 : Waits sig (HIx 1)) (t1 : Fin k1_t1_loop.trips) (v1407 : BitVec 32) (k : Fin k1_t5_loop.trips) (hk : ¬ k.val < 7) (ht : ¬ t1.val < 3) :
    invF d L fl qt tab O W0 (2 * t1.val + 1) k.val ⟨⟩
      ⊢ wp frame (wpE (defs₀ (F := F)) 𝒱₀ (thr d L) none) Set.univ
          (k1_t5_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10 t1 v1407 k ⟨⟩)
          (invL d L fl qt tab O W0 (2 * t1.val + 1)) := by
  unfold k1_t5_body
  unfold invF invL
  iintro ⟨#Hmw', %r, %g1, %g2, %wb, %o, %ho, ⟨%hT, %hR, %ho_eq, %hV⟩, Hg0, H1, Ht, H3, H2, H4, Hg1, %W', %hW', HO⟩
  have hin := hin_of d L g1 hT
  have h9 := cond9_ge k hk
  have h10 := cond10_ge_ge t1 k hk ht
  sl_exec_parts (disch := first | decide | (chk_disch1; exact hR _))
  sl_unroll
  sl_exec_parts (disch := first | decide | (chk_disch1; exact hR _))
  sl_unroll
  sl_exec_parts (disch := first | decide | (chk_disch1; exact hR _))
  sl_step
  isplitl []; · iexact Hmw'
  iexists _; iexists g1; iexists g2; iexists _
  isplitr; rotate_left
  · isplitl [Hg0]; · iexact Hg0
    isplitl [H1]; · iexact H1
    isplitl [Ht]; · iexact Ht
    isplitl [H3]; · iexact H3
    isplitl [H2]; · iexact H2
    isplitl [H4]; · iexact H4
    isplitl [Hg1]; · iexact Hg1
    iexists (insert (SemLoc.dma cc1_scratch6.sem, (default : HIx 1)) (insert (SemLoc.dma cc1_scratch5.sem, (default : HIx 1)) W')); isplitr
    · ipureintro; intro p hp
      rcases Finset.mem_insert.mp hp with rfl | hp
      · exact .inr rfl
      rcases Finset.mem_insert.mp hp with rfl | hp
      · exact .inr rfl
      · exact hW' p hp
    · iexact HO
  · ipureintro
    refine ⟨hT, hR, ?_⟩
    obtain ⟨hT1, hR1, hnext, hrows, hwb⟩ := hV
    refine ⟨hT1, hR1, hnext, fun h => absurd h (by omega), ?_⟩
    have h8 : k.val < 8 := lt_of_lt_of_eq k.isLt trips5
    have hRA : RowsV d L fl tab (wL L).val (2 * t1.val + 1) (2 * k.val) 0 (View.write (Elt F) (h1M).view r (pair1_last.sl.gather0 d L tab k g1 hin) Finset.univ) :=
      RowsV_keep0 d L fl tab (wL L).val (2 * t1.val + 1) (2 * k.val) r _ (hrows (Or.inl h8))
    have hwB := words_of_TixV d L fl (wL L).val (2 * t1.val + 1) 1 (2 * k.val + 1) (by decide) (by omega) g1 hT1 (k1_off64 k)
      (by rw [k1_off64_eq]; show 128 * k.val + 1088 = 1024 * 1 + 64 * (2 * k.val + 1); omega)
    have hRB1 : RowsV d L fl tab (wL L).val (2 * t1.val + 1) (2 * k.val + 1) 1 (View.write (Elt F) (h1M).view r (pair1_last.sl.gather0 d L tab k g1 hin) Finset.univ) :=
      RowsV_landing1 d L fl tab (by decide) (wL L).val (2 * t1.val + 1) (2 * k.val + 1) g1 (k1_off64 k) (k1_off64_inb k) hwB (hin _ _) r
    have hRB := hRB1
    have hw_v1667 : pair1_last.sl.v1667 d L k g2 = Spec.tcol (blkWord fl (wL L).val (2 * t1.val + 1) (64 * (2 * k.val) + 0)) := by
      refine (rv_extract d L g2 (k1_off65 k ⟨0, by decide⟩) _ _ 0 (by decide) _ _).trans ?_
      exact rv_word d L fl (wL L).val (2 * t1.val + 1) 1 (2 * k.val) 0 (by decide) (by omega) (by decide) g2 hR1 _
        (by rw [k1_off65_eq]; show 128 * k.val + 16 * 0 + 1024 + 0 = 1024 * 1 + 64 * (2 * k.val) + 0; omega) _
    have hw_v1703 : pair1_last.sl.v1703 d L k g2 = Spec.tcol (blkWord fl (wL L).val (2 * t1.val + 1) (64 * (2 * k.val) + 1)) := by
      refine (rv_extract d L g2 (k1_off65 k ⟨0, by decide⟩) _ _ 1 (by decide) _ _).trans ?_
      exact rv_word d L fl (wL L).val (2 * t1.val + 1) 1 (2 * k.val) 1 (by decide) (by omega) (by decide) g2 hR1 _
        (by rw [k1_off65_eq]; show 128 * k.val + 16 * 0 + 1024 + 1 = 1024 * 1 + 64 * (2 * k.val) + 1; omega) _
    have hw_v1739 : pair1_last.sl.v1739 d L k g2 = Spec.tcol (blkWord fl (wL L).val (2 * t1.val + 1) (64 * (2 * k.val) + 2)) := by
      refine (rv_extract d L g2 (k1_off65 k ⟨0, by decide⟩) _ _ 2 (by decide) _ _).trans ?_
      exact rv_word d L fl (wL L).val (2 * t1.val + 1) 1 (2 * k.val) 2 (by decide) (by omega) (by decide) g2 hR1 _
        (by rw [k1_off65_eq]; show 128 * k.val + 16 * 0 + 1024 + 2 = 1024 * 1 + 64 * (2 * k.val) + 2; omega) _
    have hw_v1775 : pair1_last.sl.v1775 d L k g2 = Spec.tcol (blkWord fl (wL L).val (2 * t1.val + 1) (64 * (2 * k.val) + 3)) := by
      refine (rv_extract d L g2 (k1_off65 k ⟨0, by decide⟩) _ _ 3 (by decide) _ _).trans ?_
      exact rv_word d L fl (wL L).val (2 * t1.val + 1) 1 (2 * k.val) 3 (by decide) (by omega) (by decide) g2 hR1 _
        (by rw [k1_off65_eq]; show 128 * k.val + 16 * 0 + 1024 + 3 = 1024 * 1 + 64 * (2 * k.val) + 3; omega) _
    have hw_v1811 : pair1_last.sl.v1811 d L k g2 = Spec.tcol (blkWord fl (wL L).val (2 * t1.val + 1) (64 * (2 * k.val) + 4)) := by
      refine (rv_extract d L g2 (k1_off65 k ⟨0, by decide⟩) _ _ 4 (by decide) _ _).trans ?_
      exact rv_word d L fl (wL L).val (2 * t1.val + 1) 1 (2 * k.val) 4 (by decide) (by omega) (by decide) g2 hR1 _
        (by rw [k1_off65_eq]; show 128 * k.val + 16 * 0 + 1024 + 4 = 1024 * 1 + 64 * (2 * k.val) + 4; omega) _
    have hw_v1847 : pair1_last.sl.v1847 d L k g2 = Spec.tcol (blkWord fl (wL L).val (2 * t1.val + 1) (64 * (2 * k.val) + 5)) := by
      refine (rv_extract d L g2 (k1_off65 k ⟨0, by decide⟩) _ _ 5 (by decide) _ _).trans ?_
      exact rv_word d L fl (wL L).val (2 * t1.val + 1) 1 (2 * k.val) 5 (by decide) (by omega) (by decide) g2 hR1 _
        (by rw [k1_off65_eq]; show 128 * k.val + 16 * 0 + 1024 + 5 = 1024 * 1 + 64 * (2 * k.val) + 5; omega) _
    have hw_v1883 : pair1_last.sl.v1883 d L k g2 = Spec.tcol (blkWord fl (wL L).val (2 * t1.val + 1) (64 * (2 * k.val) + 6)) := by
      refine (rv_extract d L g2 (k1_off65 k ⟨0, by decide⟩) _ _ 6 (by decide) _ _).trans ?_
      exact rv_word d L fl (wL L).val (2 * t1.val + 1) 1 (2 * k.val) 6 (by decide) (by omega) (by decide) g2 hR1 _
        (by rw [k1_off65_eq]; show 128 * k.val + 16 * 0 + 1024 + 6 = 1024 * 1 + 64 * (2 * k.val) + 6; omega) _
    have hw_v1919 : pair1_last.sl.v1919 d L k g2 = Spec.tcol (blkWord fl (wL L).val (2 * t1.val + 1) (64 * (2 * k.val) + 7)) := by
      refine (rv_extract d L g2 (k1_off65 k ⟨0, by decide⟩) _ _ 7 (by decide) _ _).trans ?_
      exact rv_word d L fl (wL L).val (2 * t1.val + 1) 1 (2 * k.val) 7 (by decide) (by omega) (by decide) g2 hR1 _
        (by rw [k1_off65_eq]; show 128 * k.val + 16 * 0 + 1024 + 7 = 1024 * 1 + 64 * (2 * k.val) + 7; omega) _
    have hw_v1955 : pair1_last.sl.v1955 d L k g2 = Spec.tcol (blkWord fl (wL L).val (2 * t1.val + 1) (64 * (2 * k.val) + 8)) := by
      refine (rv_extract d L g2 (k1_off65 k ⟨0, by decide⟩) _ _ 8 (by decide) _ _).trans ?_
      exact rv_word d L fl (wL L).val (2 * t1.val + 1) 1 (2 * k.val) 8 (by decide) (by omega) (by decide) g2 hR1 _
        (by rw [k1_off65_eq]; show 128 * k.val + 16 * 0 + 1024 + 8 = 1024 * 1 + 64 * (2 * k.val) + 8; omega) _
    have hw_v1991 : pair1_last.sl.v1991 d L k g2 = Spec.tcol (blkWord fl (wL L).val (2 * t1.val + 1) (64 * (2 * k.val) + 9)) := by
      refine (rv_extract d L g2 (k1_off65 k ⟨0, by decide⟩) _ _ 9 (by decide) _ _).trans ?_
      exact rv_word d L fl (wL L).val (2 * t1.val + 1) 1 (2 * k.val) 9 (by decide) (by omega) (by decide) g2 hR1 _
        (by rw [k1_off65_eq]; show 128 * k.val + 16 * 0 + 1024 + 9 = 1024 * 1 + 64 * (2 * k.val) + 9; omega) _
    have hw_v2027 : pair1_last.sl.v2027 d L k g2 = Spec.tcol (blkWord fl (wL L).val (2 * t1.val + 1) (64 * (2 * k.val) + 10)) := by
      refine (rv_extract d L g2 (k1_off65 k ⟨0, by decide⟩) _ _ 10 (by decide) _ _).trans ?_
      exact rv_word d L fl (wL L).val (2 * t1.val + 1) 1 (2 * k.val) 10 (by decide) (by omega) (by decide) g2 hR1 _
        (by rw [k1_off65_eq]; show 128 * k.val + 16 * 0 + 1024 + 10 = 1024 * 1 + 64 * (2 * k.val) + 10; omega) _
    have hw_v2063 : pair1_last.sl.v2063 d L k g2 = Spec.tcol (blkWord fl (wL L).val (2 * t1.val + 1) (64 * (2 * k.val) + 11)) := by
      refine (rv_extract d L g2 (k1_off65 k ⟨0, by decide⟩) _ _ 11 (by decide) _ _).trans ?_
      exact rv_word d L fl (wL L).val (2 * t1.val + 1) 1 (2 * k.val) 11 (by decide) (by omega) (by decide) g2 hR1 _
        (by rw [k1_off65_eq]; show 128 * k.val + 16 * 0 + 1024 + 11 = 1024 * 1 + 64 * (2 * k.val) + 11; omega) _
    have hw_v2099 : pair1_last.sl.v2099 d L k g2 = Spec.tcol (blkWord fl (wL L).val (2 * t1.val + 1) (64 * (2 * k.val) + 12)) := by
      refine (rv_extract d L g2 (k1_off65 k ⟨0, by decide⟩) _ _ 12 (by decide) _ _).trans ?_
      exact rv_word d L fl (wL L).val (2 * t1.val + 1) 1 (2 * k.val) 12 (by decide) (by omega) (by decide) g2 hR1 _
        (by rw [k1_off65_eq]; show 128 * k.val + 16 * 0 + 1024 + 12 = 1024 * 1 + 64 * (2 * k.val) + 12; omega) _
    have hw_v2135 : pair1_last.sl.v2135 d L k g2 = Spec.tcol (blkWord fl (wL L).val (2 * t1.val + 1) (64 * (2 * k.val) + 13)) := by
      refine (rv_extract d L g2 (k1_off65 k ⟨0, by decide⟩) _ _ 13 (by decide) _ _).trans ?_
      exact rv_word d L fl (wL L).val (2 * t1.val + 1) 1 (2 * k.val) 13 (by decide) (by omega) (by decide) g2 hR1 _
        (by rw [k1_off65_eq]; show 128 * k.val + 16 * 0 + 1024 + 13 = 1024 * 1 + 64 * (2 * k.val) + 13; omega) _
    have hw_v2171 : pair1_last.sl.v2171 d L k g2 = Spec.tcol (blkWord fl (wL L).val (2 * t1.val + 1) (64 * (2 * k.val) + 14)) := by
      refine (rv_extract d L g2 (k1_off65 k ⟨0, by decide⟩) _ _ 14 (by decide) _ _).trans ?_
      exact rv_word d L fl (wL L).val (2 * t1.val + 1) 1 (2 * k.val) 14 (by decide) (by omega) (by decide) g2 hR1 _
        (by rw [k1_off65_eq]; show 128 * k.val + 16 * 0 + 1024 + 14 = 1024 * 1 + 64 * (2 * k.val) + 14; omega) _
    have hw_v2207 : pair1_last.sl.v2207 d L k g2 = Spec.tcol (blkWord fl (wL L).val (2 * t1.val + 1) (64 * (2 * k.val) + 15)) := by
      refine (rv_extract d L g2 (k1_off65 k ⟨0, by decide⟩) _ _ 15 (by decide) _ _).trans ?_
      exact rv_word d L fl (wL L).val (2 * t1.val + 1) 1 (2 * k.val) 15 (by decide) (by omega) (by decide) g2 hR1 _
        (by rw [k1_off65_eq]; show 128 * k.val + 16 * 0 + 1024 + 15 = 1024 * 1 + 64 * (2 * k.val) + 15; omega) _
    have hw_v1667_1 : pair1_last.sl.v1667_1 d L k g2 = Spec.tcol (blkWord fl (wL L).val (2 * t1.val + 1) (64 * (2 * k.val) + 16)) := by
      refine (rv_extract d L g2 (k1_off65 k ⟨1, by decide⟩) _ _ 0 (by decide) _ _).trans ?_
      exact rv_word d L fl (wL L).val (2 * t1.val + 1) 1 (2 * k.val) 16 (by decide) (by omega) (by decide) g2 hR1 _
        (by rw [k1_off65_eq]; show 128 * k.val + 16 * 1 + 1024 + 0 = 1024 * 1 + 64 * (2 * k.val) + 16; omega) _
    have hw_v1703_1 : pair1_last.sl.v1703_1 d L k g2 = Spec.tcol (blkWord fl (wL L).val (2 * t1.val + 1) (64 * (2 * k.val) + 17)) := by
      refine (rv_extract d L g2 (k1_off65 k ⟨1, by decide⟩) _ _ 1 (by decide) _ _).trans ?_
      exact rv_word d L fl (wL L).val (2 * t1.val + 1) 1 (2 * k.val) 17 (by decide) (by omega) (by decide) g2 hR1 _
        (by rw [k1_off65_eq]; show 128 * k.val + 16 * 1 + 1024 + 1 = 1024 * 1 + 64 * (2 * k.val) + 17; omega) _
    have hw_v1739_1 : pair1_last.sl.v1739_1 d L k g2 = Spec.tcol (blkWord fl (wL L).val (2 * t1.val + 1) (64 * (2 * k.val) + 18)) := by
      refine (rv_extract d L g2 (k1_off65 k ⟨1, by decide⟩) _ _ 2 (by decide) _ _).trans ?_
      exact rv_word d L fl (wL L).val (2 * t1.val + 1) 1 (2 * k.val) 18 (by decide) (by omega) (by decide) g2 hR1 _
        (by rw [k1_off65_eq]; show 128 * k.val + 16 * 1 + 1024 + 2 = 1024 * 1 + 64 * (2 * k.val) + 18; omega) _
    have hw_v1775_1 : pair1_last.sl.v1775_1 d L k g2 = Spec.tcol (blkWord fl (wL L).val (2 * t1.val + 1) (64 * (2 * k.val) + 19)) := by
      refine (rv_extract d L g2 (k1_off65 k ⟨1, by decide⟩) _ _ 3 (by decide) _ _).trans ?_
      exact rv_word d L fl (wL L).val (2 * t1.val + 1) 1 (2 * k.val) 19 (by decide) (by omega) (by decide) g2 hR1 _
        (by rw [k1_off65_eq]; show 128 * k.val + 16 * 1 + 1024 + 3 = 1024 * 1 + 64 * (2 * k.val) + 19; omega) _
    have hw_v1811_1 : pair1_last.sl.v1811_1 d L k g2 = Spec.tcol (blkWord fl (wL L).val (2 * t1.val + 1) (64 * (2 * k.val) + 20)) := by
      refine (rv_extract d L g2 (k1_off65 k ⟨1, by decide⟩) _ _ 4 (by decide) _ _).trans ?_
      exact rv_word d L fl (wL L).val (2 * t1.val + 1) 1 (2 * k.val) 20 (by decide) (by omega) (by decide) g2 hR1 _
        (by rw [k1_off65_eq]; show 128 * k.val + 16 * 1 + 1024 + 4 = 1024 * 1 + 64 * (2 * k.val) + 20; omega) _
    have hw_v1847_1 : pair1_last.sl.v1847_1 d L k g2 = Spec.tcol (blkWord fl (wL L).val (2 * t1.val + 1) (64 * (2 * k.val) + 21)) := by
      refine (rv_extract d L g2 (k1_off65 k ⟨1, by decide⟩) _ _ 5 (by decide) _ _).trans ?_
      exact rv_word d L fl (wL L).val (2 * t1.val + 1) 1 (2 * k.val) 21 (by decide) (by omega) (by decide) g2 hR1 _
        (by rw [k1_off65_eq]; show 128 * k.val + 16 * 1 + 1024 + 5 = 1024 * 1 + 64 * (2 * k.val) + 21; omega) _
    have hw_v1883_1 : pair1_last.sl.v1883_1 d L k g2 = Spec.tcol (blkWord fl (wL L).val (2 * t1.val + 1) (64 * (2 * k.val) + 22)) := by
      refine (rv_extract d L g2 (k1_off65 k ⟨1, by decide⟩) _ _ 6 (by decide) _ _).trans ?_
      exact rv_word d L fl (wL L).val (2 * t1.val + 1) 1 (2 * k.val) 22 (by decide) (by omega) (by decide) g2 hR1 _
        (by rw [k1_off65_eq]; show 128 * k.val + 16 * 1 + 1024 + 6 = 1024 * 1 + 64 * (2 * k.val) + 22; omega) _
    have hw_v1919_1 : pair1_last.sl.v1919_1 d L k g2 = Spec.tcol (blkWord fl (wL L).val (2 * t1.val + 1) (64 * (2 * k.val) + 23)) := by
      refine (rv_extract d L g2 (k1_off65 k ⟨1, by decide⟩) _ _ 7 (by decide) _ _).trans ?_
      exact rv_word d L fl (wL L).val (2 * t1.val + 1) 1 (2 * k.val) 23 (by decide) (by omega) (by decide) g2 hR1 _
        (by rw [k1_off65_eq]; show 128 * k.val + 16 * 1 + 1024 + 7 = 1024 * 1 + 64 * (2 * k.val) + 23; omega) _
    have hw_v1955_1 : pair1_last.sl.v1955_1 d L k g2 = Spec.tcol (blkWord fl (wL L).val (2 * t1.val + 1) (64 * (2 * k.val) + 24)) := by
      refine (rv_extract d L g2 (k1_off65 k ⟨1, by decide⟩) _ _ 8 (by decide) _ _).trans ?_
      exact rv_word d L fl (wL L).val (2 * t1.val + 1) 1 (2 * k.val) 24 (by decide) (by omega) (by decide) g2 hR1 _
        (by rw [k1_off65_eq]; show 128 * k.val + 16 * 1 + 1024 + 8 = 1024 * 1 + 64 * (2 * k.val) + 24; omega) _
    have hw_v1991_1 : pair1_last.sl.v1991_1 d L k g2 = Spec.tcol (blkWord fl (wL L).val (2 * t1.val + 1) (64 * (2 * k.val) + 25)) := by
      refine (rv_extract d L g2 (k1_off65 k ⟨1, by decide⟩) _ _ 9 (by decide) _ _).trans ?_
      exact rv_word d L fl (wL L).val (2 * t1.val + 1) 1 (2 * k.val) 25 (by decide) (by omega) (by decide) g2 hR1 _
        (by rw [k1_off65_eq]; show 128 * k.val + 16 * 1 + 1024 + 9 = 1024 * 1 + 64 * (2 * k.val) + 25; omega) _
    have hw_v2027_1 : pair1_last.sl.v2027_1 d L k g2 = Spec.tcol (blkWord fl (wL L).val (2 * t1.val + 1) (64 * (2 * k.val) + 26)) := by
      refine (rv_extract d L g2 (k1_off65 k ⟨1, by decide⟩) _ _ 10 (by decide) _ _).trans ?_
      exact rv_word d L fl (wL L).val (2 * t1.val + 1) 1 (2 * k.val) 26 (by decide) (by omega) (by decide) g2 hR1 _
        (by rw [k1_off65_eq]; show 128 * k.val + 16 * 1 + 1024 + 10 = 1024 * 1 + 64 * (2 * k.val) + 26; omega) _
    have hw_v2063_1 : pair1_last.sl.v2063_1 d L k g2 = Spec.tcol (blkWord fl (wL L).val (2 * t1.val + 1) (64 * (2 * k.val) + 27)) := by
      refine (rv_extract d L g2 (k1_off65 k ⟨1, by decide⟩) _ _ 11 (by decide) _ _).trans ?_
      exact rv_word d L fl (wL L).val (2 * t1.val + 1) 1 (2 * k.val) 27 (by decide) (by omega) (by decide) g2 hR1 _
        (by rw [k1_off65_eq]; show 128 * k.val + 16 * 1 + 1024 + 11 = 1024 * 1 + 64 * (2 * k.val) + 27; omega) _
    have hw_v2099_1 : pair1_last.sl.v2099_1 d L k g2 = Spec.tcol (blkWord fl (wL L).val (2 * t1.val + 1) (64 * (2 * k.val) + 28)) := by
      refine (rv_extract d L g2 (k1_off65 k ⟨1, by decide⟩) _ _ 12 (by decide) _ _).trans ?_
      exact rv_word d L fl (wL L).val (2 * t1.val + 1) 1 (2 * k.val) 28 (by decide) (by omega) (by decide) g2 hR1 _
        (by rw [k1_off65_eq]; show 128 * k.val + 16 * 1 + 1024 + 12 = 1024 * 1 + 64 * (2 * k.val) + 28; omega) _
    have hw_v2135_1 : pair1_last.sl.v2135_1 d L k g2 = Spec.tcol (blkWord fl (wL L).val (2 * t1.val + 1) (64 * (2 * k.val) + 29)) := by
      refine (rv_extract d L g2 (k1_off65 k ⟨1, by decide⟩) _ _ 13 (by decide) _ _).trans ?_
      exact rv_word d L fl (wL L).val (2 * t1.val + 1) 1 (2 * k.val) 29 (by decide) (by omega) (by decide) g2 hR1 _
        (by rw [k1_off65_eq]; show 128 * k.val + 16 * 1 + 1024 + 13 = 1024 * 1 + 64 * (2 * k.val) + 29; omega) _
    have hw_v2171_1 : pair1_last.sl.v2171_1 d L k g2 = Spec.tcol (blkWord fl (wL L).val (2 * t1.val + 1) (64 * (2 * k.val) + 30)) := by
      refine (rv_extract d L g2 (k1_off65 k ⟨1, by decide⟩) _ _ 14 (by decide) _ _).trans ?_
      exact rv_word d L fl (wL L).val (2 * t1.val + 1) 1 (2 * k.val) 30 (by decide) (by omega) (by decide) g2 hR1 _
        (by rw [k1_off65_eq]; show 128 * k.val + 16 * 1 + 1024 + 14 = 1024 * 1 + 64 * (2 * k.val) + 30; omega) _
    have hw_v2207_1 : pair1_last.sl.v2207_1 d L k g2 = Spec.tcol (blkWord fl (wL L).val (2 * t1.val + 1) (64 * (2 * k.val) + 31)) := by
      refine (rv_extract d L g2 (k1_off65 k ⟨1, by decide⟩) _ _ 15 (by decide) _ _).trans ?_
      exact rv_word d L fl (wL L).val (2 * t1.val + 1) 1 (2 * k.val) 31 (by decide) (by omega) (by decide) g2 hR1 _
        (by rw [k1_off65_eq]; show 128 * k.val + 16 * 1 + 1024 + 15 = 1024 * 1 + 64 * (2 * k.val) + 31; omega) _
    have hw_v1667_2 : pair1_last.sl.v1667_2 d L k g2 = Spec.tcol (blkWord fl (wL L).val (2 * t1.val + 1) (64 * (2 * k.val) + 32)) := by
      refine (rv_extract d L g2 (k1_off65 k ⟨2, by decide⟩) _ _ 0 (by decide) _ _).trans ?_
      exact rv_word d L fl (wL L).val (2 * t1.val + 1) 1 (2 * k.val) 32 (by decide) (by omega) (by decide) g2 hR1 _
        (by rw [k1_off65_eq]; show 128 * k.val + 16 * 2 + 1024 + 0 = 1024 * 1 + 64 * (2 * k.val) + 32; omega) _
    have hw_v1703_2 : pair1_last.sl.v1703_2 d L k g2 = Spec.tcol (blkWord fl (wL L).val (2 * t1.val + 1) (64 * (2 * k.val) + 33)) := by
      refine (rv_extract d L g2 (k1_off65 k ⟨2, by decide⟩) _ _ 1 (by decide) _ _).trans ?_
      exact rv_word d L fl (wL L).val (2 * t1.val + 1) 1 (2 * k.val) 33 (by decide) (by omega) (by decide) g2 hR1 _
        (by rw [k1_off65_eq]; show 128 * k.val + 16 * 2 + 1024 + 1 = 1024 * 1 + 64 * (2 * k.val) + 33; omega) _
    have hw_v1739_2 : pair1_last.sl.v1739_2 d L k g2 = Spec.tcol (blkWord fl (wL L).val (2 * t1.val + 1) (64 * (2 * k.val) + 34)) := by
      refine (rv_extract d L g2 (k1_off65 k ⟨2, by decide⟩) _ _ 2 (by decide) _ _).trans ?_
      exact rv_word d L fl (wL L).val (2 * t1.val + 1) 1 (2 * k.val) 34 (by decide) (by omega) (by decide) g2 hR1 _
        (by rw [k1_off65_eq]; show 128 * k.val + 16 * 2 + 1024 + 2 = 1024 * 1 + 64 * (2 * k.val) + 34; omega) _
    have hw_v1775_2 : pair1_last.sl.v1775_2 d L k g2 = Spec.tcol (blkWord fl (wL L).val (2 * t1.val + 1) (64 * (2 * k.val) + 35)) := by
      refine (rv_extract d L g2 (k1_off65 k ⟨2, by decide⟩) _ _ 3 (by decide) _ _).trans ?_
      exact rv_word d L fl (wL L).val (2 * t1.val + 1) 1 (2 * k.val) 35 (by decide) (by omega) (by decide) g2 hR1 _
        (by rw [k1_off65_eq]; show 128 * k.val + 16 * 2 + 1024 + 3 = 1024 * 1 + 64 * (2 * k.val) + 35; omega) _
    have hw_v1811_2 : pair1_last.sl.v1811_2 d L k g2 = Spec.tcol (blkWord fl (wL L).val (2 * t1.val + 1) (64 * (2 * k.val) + 36)) := by
      refine (rv_extract d L g2 (k1_off65 k ⟨2, by decide⟩) _ _ 4 (by decide) _ _).trans ?_
      exact rv_word d L fl (wL L).val (2 * t1.val + 1) 1 (2 * k.val) 36 (by decide) (by omega) (by decide) g2 hR1 _
        (by rw [k1_off65_eq]; show 128 * k.val + 16 * 2 + 1024 + 4 = 1024 * 1 + 64 * (2 * k.val) + 36; omega) _
    have hw_v1847_2 : pair1_last.sl.v1847_2 d L k g2 = Spec.tcol (blkWord fl (wL L).val (2 * t1.val + 1) (64 * (2 * k.val) + 37)) := by
      refine (rv_extract d L g2 (k1_off65 k ⟨2, by decide⟩) _ _ 5 (by decide) _ _).trans ?_
      exact rv_word d L fl (wL L).val (2 * t1.val + 1) 1 (2 * k.val) 37 (by decide) (by omega) (by decide) g2 hR1 _
        (by rw [k1_off65_eq]; show 128 * k.val + 16 * 2 + 1024 + 5 = 1024 * 1 + 64 * (2 * k.val) + 37; omega) _
    have hw_v1883_2 : pair1_last.sl.v1883_2 d L k g2 = Spec.tcol (blkWord fl (wL L).val (2 * t1.val + 1) (64 * (2 * k.val) + 38)) := by
      refine (rv_extract d L g2 (k1_off65 k ⟨2, by decide⟩) _ _ 6 (by decide) _ _).trans ?_
      exact rv_word d L fl (wL L).val (2 * t1.val + 1) 1 (2 * k.val) 38 (by decide) (by omega) (by decide) g2 hR1 _
        (by rw [k1_off65_eq]; show 128 * k.val + 16 * 2 + 1024 + 6 = 1024 * 1 + 64 * (2 * k.val) + 38; omega) _
    have hw_v1919_2 : pair1_last.sl.v1919_2 d L k g2 = Spec.tcol (blkWord fl (wL L).val (2 * t1.val + 1) (64 * (2 * k.val) + 39)) := by
      refine (rv_extract d L g2 (k1_off65 k ⟨2, by decide⟩) _ _ 7 (by decide) _ _).trans ?_
      exact rv_word d L fl (wL L).val (2 * t1.val + 1) 1 (2 * k.val) 39 (by decide) (by omega) (by decide) g2 hR1 _
        (by rw [k1_off65_eq]; show 128 * k.val + 16 * 2 + 1024 + 7 = 1024 * 1 + 64 * (2 * k.val) + 39; omega) _
    have hw_v1955_2 : pair1_last.sl.v1955_2 d L k g2 = Spec.tcol (blkWord fl (wL L).val (2 * t1.val + 1) (64 * (2 * k.val) + 40)) := by
      refine (rv_extract d L g2 (k1_off65 k ⟨2, by decide⟩) _ _ 8 (by decide) _ _).trans ?_
      exact rv_word d L fl (wL L).val (2 * t1.val + 1) 1 (2 * k.val) 40 (by decide) (by omega) (by decide) g2 hR1 _
        (by rw [k1_off65_eq]; show 128 * k.val + 16 * 2 + 1024 + 8 = 1024 * 1 + 64 * (2 * k.val) + 40; omega) _
    have hw_v1991_2 : pair1_last.sl.v1991_2 d L k g2 = Spec.tcol (blkWord fl (wL L).val (2 * t1.val + 1) (64 * (2 * k.val) + 41)) := by
      refine (rv_extract d L g2 (k1_off65 k ⟨2, by decide⟩) _ _ 9 (by decide) _ _).trans ?_
      exact rv_word d L fl (wL L).val (2 * t1.val + 1) 1 (2 * k.val) 41 (by decide) (by omega) (by decide) g2 hR1 _
        (by rw [k1_off65_eq]; show 128 * k.val + 16 * 2 + 1024 + 9 = 1024 * 1 + 64 * (2 * k.val) + 41; omega) _
    have hw_v2027_2 : pair1_last.sl.v2027_2 d L k g2 = Spec.tcol (blkWord fl (wL L).val (2 * t1.val + 1) (64 * (2 * k.val) + 42)) := by
      refine (rv_extract d L g2 (k1_off65 k ⟨2, by decide⟩) _ _ 10 (by decide) _ _).trans ?_
      exact rv_word d L fl (wL L).val (2 * t1.val + 1) 1 (2 * k.val) 42 (by decide) (by omega) (by decide) g2 hR1 _
        (by rw [k1_off65_eq]; show 128 * k.val + 16 * 2 + 1024 + 10 = 1024 * 1 + 64 * (2 * k.val) + 42; omega) _
    have hw_v2063_2 : pair1_last.sl.v2063_2 d L k g2 = Spec.tcol (blkWord fl (wL L).val (2 * t1.val + 1) (64 * (2 * k.val) + 43)) := by
      refine (rv_extract d L g2 (k1_off65 k ⟨2, by decide⟩) _ _ 11 (by decide) _ _).trans ?_
      exact rv_word d L fl (wL L).val (2 * t1.val + 1) 1 (2 * k.val) 43 (by decide) (by omega) (by decide) g2 hR1 _
        (by rw [k1_off65_eq]; show 128 * k.val + 16 * 2 + 1024 + 11 = 1024 * 1 + 64 * (2 * k.val) + 43; omega) _
    have hw_v2099_2 : pair1_last.sl.v2099_2 d L k g2 = Spec.tcol (blkWord fl (wL L).val (2 * t1.val + 1) (64 * (2 * k.val) + 44)) := by
      refine (rv_extract d L g2 (k1_off65 k ⟨2, by decide⟩) _ _ 12 (by decide) _ _).trans ?_
      exact rv_word d L fl (wL L).val (2 * t1.val + 1) 1 (2 * k.val) 44 (by decide) (by omega) (by decide) g2 hR1 _
        (by rw [k1_off65_eq]; show 128 * k.val + 16 * 2 + 1024 + 12 = 1024 * 1 + 64 * (2 * k.val) + 44; omega) _
    have hw_v2135_2 : pair1_last.sl.v2135_2 d L k g2 = Spec.tcol (blkWord fl (wL L).val (2 * t1.val + 1) (64 * (2 * k.val) + 45)) := by
      refine (rv_extract d L g2 (k1_off65 k ⟨2, by decide⟩) _ _ 13 (by decide) _ _).trans ?_
      exact rv_word d L fl (wL L).val (2 * t1.val + 1) 1 (2 * k.val) 45 (by decide) (by omega) (by decide) g2 hR1 _
        (by rw [k1_off65_eq]; show 128 * k.val + 16 * 2 + 1024 + 13 = 1024 * 1 + 64 * (2 * k.val) + 45; omega) _
    have hw_v2171_2 : pair1_last.sl.v2171_2 d L k g2 = Spec.tcol (blkWord fl (wL L).val (2 * t1.val + 1) (64 * (2 * k.val) + 46)) := by
      refine (rv_extract d L g2 (k1_off65 k ⟨2, by decide⟩) _ _ 14 (by decide) _ _).trans ?_
      exact rv_word d L fl (wL L).val (2 * t1.val + 1) 1 (2 * k.val) 46 (by decide) (by omega) (by decide) g2 hR1 _
        (by rw [k1_off65_eq]; show 128 * k.val + 16 * 2 + 1024 + 14 = 1024 * 1 + 64 * (2 * k.val) + 46; omega) _
    have hw_v2207_2 : pair1_last.sl.v2207_2 d L k g2 = Spec.tcol (blkWord fl (wL L).val (2 * t1.val + 1) (64 * (2 * k.val) + 47)) := by
      refine (rv_extract d L g2 (k1_off65 k ⟨2, by decide⟩) _ _ 15 (by decide) _ _).trans ?_
      exact rv_word d L fl (wL L).val (2 * t1.val + 1) 1 (2 * k.val) 47 (by decide) (by omega) (by decide) g2 hR1 _
        (by rw [k1_off65_eq]; show 128 * k.val + 16 * 2 + 1024 + 15 = 1024 * 1 + 64 * (2 * k.val) + 47; omega) _
    have hw_v1456 : pair1_last.sl.v1456 d L k g2 = Spec.tcol (blkWord fl (wL L).val (2 * t1.val + 1) (64 * (2 * k.val) + 48)) := by
      refine (rv_extract d L g2 (k1_off82 k) _ _ 0 (by decide) _ _).trans ?_
      exact rv_word d L fl (wL L).val (2 * t1.val + 1) 1 (2 * k.val) 48 (by decide) (by omega) (by decide) g2 hR1 _
        (by rw [k1_off82_eq]; show 128 * k.val + 1072 + 0 = 1024 * 1 + 64 * (2 * k.val) + 48; omega) _
    have hw_v1490 : pair1_last.sl.v1490 d L k g2 = Spec.tcol (blkWord fl (wL L).val (2 * t1.val + 1) (64 * (2 * k.val) + 49)) := by
      refine (rv_extract d L g2 (k1_off82 k) _ _ 1 (by decide) _ _).trans ?_
      exact rv_word d L fl (wL L).val (2 * t1.val + 1) 1 (2 * k.val) 49 (by decide) (by omega) (by decide) g2 hR1 _
        (by rw [k1_off82_eq]; show 128 * k.val + 1072 + 1 = 1024 * 1 + 64 * (2 * k.val) + 49; omega) _
    have hw_v1667_3 : pair1_last.sl.v1667_3 d L k g2 = Spec.tcol (blkWord fl (wL L).val (2 * t1.val + 1) (64 * (2 * k.val + 1) + 0)) := by
      refine (rv_extract d L g2 (k1_off92 k ⟨0, by decide⟩) _ _ 0 (by decide) _ _).trans ?_
      exact rv_word d L fl (wL L).val (2 * t1.val + 1) 1 (2 * k.val + 1) 0 (by decide) (by omega) (by decide) g2 hR1 _
        (by rw [k1_off92_eq]; show 128 * k.val + 16 * 0 + 1088 + 0 = 1024 * 1 + 64 * (2 * k.val + 1) + 0; omega) _
    have hw_v1703_3 : pair1_last.sl.v1703_3 d L k g2 = Spec.tcol (blkWord fl (wL L).val (2 * t1.val + 1) (64 * (2 * k.val + 1) + 1)) := by
      refine (rv_extract d L g2 (k1_off92 k ⟨0, by decide⟩) _ _ 1 (by decide) _ _).trans ?_
      exact rv_word d L fl (wL L).val (2 * t1.val + 1) 1 (2 * k.val + 1) 1 (by decide) (by omega) (by decide) g2 hR1 _
        (by rw [k1_off92_eq]; show 128 * k.val + 16 * 0 + 1088 + 1 = 1024 * 1 + 64 * (2 * k.val + 1) + 1; omega) _
    have hw_v1739_3 : pair1_last.sl.v1739_3 d L k g2 = Spec.tcol (blkWord fl (wL L).val (2 * t1.val + 1) (64 * (2 * k.val + 1) + 2)) := by
      refine (rv_extract d L g2 (k1_off92 k ⟨0, by decide⟩) _ _ 2 (by decide) _ _).trans ?_
      exact rv_word d L fl (wL L).val (2 * t1.val + 1) 1 (2 * k.val + 1) 2 (by decide) (by omega) (by decide) g2 hR1 _
        (by rw [k1_off92_eq]; show 128 * k.val + 16 * 0 + 1088 + 2 = 1024 * 1 + 64 * (2 * k.val + 1) + 2; omega) _
    have hw_v1775_3 : pair1_last.sl.v1775_3 d L k g2 = Spec.tcol (blkWord fl (wL L).val (2 * t1.val + 1) (64 * (2 * k.val + 1) + 3)) := by
      refine (rv_extract d L g2 (k1_off92 k ⟨0, by decide⟩) _ _ 3 (by decide) _ _).trans ?_
      exact rv_word d L fl (wL L).val (2 * t1.val + 1) 1 (2 * k.val + 1) 3 (by decide) (by omega) (by decide) g2 hR1 _
        (by rw [k1_off92_eq]; show 128 * k.val + 16 * 0 + 1088 + 3 = 1024 * 1 + 64 * (2 * k.val + 1) + 3; omega) _
    have hw_v1811_3 : pair1_last.sl.v1811_3 d L k g2 = Spec.tcol (blkWord fl (wL L).val (2 * t1.val + 1) (64 * (2 * k.val + 1) + 4)) := by
      refine (rv_extract d L g2 (k1_off92 k ⟨0, by decide⟩) _ _ 4 (by decide) _ _).trans ?_
      exact rv_word d L fl (wL L).val (2 * t1.val + 1) 1 (2 * k.val + 1) 4 (by decide) (by omega) (by decide) g2 hR1 _
        (by rw [k1_off92_eq]; show 128 * k.val + 16 * 0 + 1088 + 4 = 1024 * 1 + 64 * (2 * k.val + 1) + 4; omega) _
    have hw_v1847_3 : pair1_last.sl.v1847_3 d L k g2 = Spec.tcol (blkWord fl (wL L).val (2 * t1.val + 1) (64 * (2 * k.val + 1) + 5)) := by
      refine (rv_extract d L g2 (k1_off92 k ⟨0, by decide⟩) _ _ 5 (by decide) _ _).trans ?_
      exact rv_word d L fl (wL L).val (2 * t1.val + 1) 1 (2 * k.val + 1) 5 (by decide) (by omega) (by decide) g2 hR1 _
        (by rw [k1_off92_eq]; show 128 * k.val + 16 * 0 + 1088 + 5 = 1024 * 1 + 64 * (2 * k.val + 1) + 5; omega) _
    have hw_v1883_3 : pair1_last.sl.v1883_3 d L k g2 = Spec.tcol (blkWord fl (wL L).val (2 * t1.val + 1) (64 * (2 * k.val + 1) + 6)) := by
      refine (rv_extract d L g2 (k1_off92 k ⟨0, by decide⟩) _ _ 6 (by decide) _ _).trans ?_
      exact rv_word d L fl (wL L).val (2 * t1.val + 1) 1 (2 * k.val + 1) 6 (by decide) (by omega) (by decide) g2 hR1 _
        (by rw [k1_off92_eq]; show 128 * k.val + 16 * 0 + 1088 + 6 = 1024 * 1 + 64 * (2 * k.val + 1) + 6; omega) _
    have hw_v1919_3 : pair1_last.sl.v1919_3 d L k g2 = Spec.tcol (blkWord fl (wL L).val (2 * t1.val + 1) (64 * (2 * k.val + 1) + 7)) := by
      refine (rv_extract d L g2 (k1_off92 k ⟨0, by decide⟩) _ _ 7 (by decide) _ _).trans ?_
      exact rv_word d L fl (wL L).val (2 * t1.val + 1) 1 (2 * k.val + 1) 7 (by decide) (by omega) (by decide) g2 hR1 _
        (by rw [k1_off92_eq]; show 128 * k.val + 16 * 0 + 1088 + 7 = 1024 * 1 + 64 * (2 * k.val + 1) + 7; omega) _
    have hw_v1955_3 : pair1_last.sl.v1955_3 d L k g2 = Spec.tcol (blkWord fl (wL L).val (2 * t1.val + 1) (64 * (2 * k.val + 1) + 8)) := by
      refine (rv_extract d L g2 (k1_off92 k ⟨0, by decide⟩) _ _ 8 (by decide) _ _).trans ?_
      exact rv_word d L fl (wL L).val (2 * t1.val + 1) 1 (2 * k.val + 1) 8 (by decide) (by omega) (by decide) g2 hR1 _
        (by rw [k1_off92_eq]; show 128 * k.val + 16 * 0 + 1088 + 8 = 1024 * 1 + 64 * (2 * k.val + 1) + 8; omega) _
    have hw_v1991_3 : pair1_last.sl.v1991_3 d L k g2 = Spec.tcol (blkWord fl (wL L).val (2 * t1.val + 1) (64 * (2 * k.val + 1) + 9)) := by
      refine (rv_extract d L g2 (k1_off92 k ⟨0, by decide⟩) _ _ 9 (by decide) _ _).trans ?_
      exact rv_word d L fl (wL L).val (2 * t1.val + 1) 1 (2 * k.val + 1) 9 (by decide) (by omega) (by decide) g2 hR1 _
        (by rw [k1_off92_eq]; show 128 * k.val + 16 * 0 + 1088 + 9 = 1024 * 1 + 64 * (2 * k.val + 1) + 9; omega) _
    have hw_v2027_3 : pair1_last.sl.v2027_3 d L k g2 = Spec.tcol (blkWord fl (wL L).val (2 * t1.val + 1) (64 * (2 * k.val + 1) + 10)) := by
      refine (rv_extract d L g2 (k1_off92 k ⟨0, by decide⟩) _ _ 10 (by decide) _ _).trans ?_
      exact rv_word d L fl (wL L).val (2 * t1.val + 1) 1 (2 * k.val + 1) 10 (by decide) (by omega) (by decide) g2 hR1 _
        (by rw [k1_off92_eq]; show 128 * k.val + 16 * 0 + 1088 + 10 = 1024 * 1 + 64 * (2 * k.val + 1) + 10; omega) _
    have hw_v2063_3 : pair1_last.sl.v2063_3 d L k g2 = Spec.tcol (blkWord fl (wL L).val (2 * t1.val + 1) (64 * (2 * k.val + 1) + 11)) := by
      refine (rv_extract d L g2 (k1_off92 k ⟨0, by decide⟩) _ _ 11 (by decide) _ _).trans ?_
      exact rv_word d L fl (wL L).val (2 * t1.val + 1) 1 (2 * k.val + 1) 11 (by decide) (by omega) (by decide) g2 hR1 _
        (by rw [k1_off92_eq]; show 128 * k.val + 16 * 0 + 1088 + 11 = 1024 * 1 + 64 * (2 * k.val + 1) + 11; omega) _
    have hw_v2099_3 : pair1_last.sl.v2099_3 d L k g2 = Spec.tcol (blkWord fl (wL L).val (2 * t1.val + 1) (64 * (2 * k.val + 1) + 12)) := by
      refine (rv_extract d L g2 (k1_off92 k ⟨0, by decide⟩) _ _ 12 (by decide) _ _).trans ?_
      exact rv_word d L fl (wL L).val (2 * t1.val + 1) 1 (2 * k.val + 1) 12 (by decide) (by omega) (by decide) g2 hR1 _
        (by rw [k1_off92_eq]; show 128 * k.val + 16 * 0 + 1088 + 12 = 1024 * 1 + 64 * (2 * k.val + 1) + 12; omega) _
    have hw_v2135_3 : pair1_last.sl.v2135_3 d L k g2 = Spec.tcol (blkWord fl (wL L).val (2 * t1.val + 1) (64 * (2 * k.val + 1) + 13)) := by
      refine (rv_extract d L g2 (k1_off92 k ⟨0, by decide⟩) _ _ 13 (by decide) _ _).trans ?_
      exact rv_word d L fl (wL L).val (2 * t1.val + 1) 1 (2 * k.val + 1) 13 (by decide) (by omega) (by decide) g2 hR1 _
        (by rw [k1_off92_eq]; show 128 * k.val + 16 * 0 + 1088 + 13 = 1024 * 1 + 64 * (2 * k.val + 1) + 13; omega) _
    have hw_v2171_3 : pair1_last.sl.v2171_3 d L k g2 = Spec.tcol (blkWord fl (wL L).val (2 * t1.val + 1) (64 * (2 * k.val + 1) + 14)) := by
      refine (rv_extract d L g2 (k1_off92 k ⟨0, by decide⟩) _ _ 14 (by decide) _ _).trans ?_
      exact rv_word d L fl (wL L).val (2 * t1.val + 1) 1 (2 * k.val + 1) 14 (by decide) (by omega) (by decide) g2 hR1 _
        (by rw [k1_off92_eq]; show 128 * k.val + 16 * 0 + 1088 + 14 = 1024 * 1 + 64 * (2 * k.val + 1) + 14; omega) _
    have hw_v2207_3 : pair1_last.sl.v2207_3 d L k g2 = Spec.tcol (blkWord fl (wL L).val (2 * t1.val + 1) (64 * (2 * k.val + 1) + 15)) := by
      refine (rv_extract d L g2 (k1_off92 k ⟨0, by decide⟩) _ _ 15 (by decide) _ _).trans ?_
      exact rv_word d L fl (wL L).val (2 * t1.val + 1) 1 (2 * k.val + 1) 15 (by decide) (by omega) (by decide) g2 hR1 _
        (by rw [k1_off92_eq]; show 128 * k.val + 16 * 0 + 1088 + 15 = 1024 * 1 + 64 * (2 * k.val + 1) + 15; omega) _
    have hw_v1667_4 : pair1_last.sl.v1667_4 d L k g2 = Spec.tcol (blkWord fl (wL L).val (2 * t1.val + 1) (64 * (2 * k.val + 1) + 16)) := by
      refine (rv_extract d L g2 (k1_off92 k ⟨1, by decide⟩) _ _ 0 (by decide) _ _).trans ?_
      exact rv_word d L fl (wL L).val (2 * t1.val + 1) 1 (2 * k.val + 1) 16 (by decide) (by omega) (by decide) g2 hR1 _
        (by rw [k1_off92_eq]; show 128 * k.val + 16 * 1 + 1088 + 0 = 1024 * 1 + 64 * (2 * k.val + 1) + 16; omega) _
    have hw_v1703_4 : pair1_last.sl.v1703_4 d L k g2 = Spec.tcol (blkWord fl (wL L).val (2 * t1.val + 1) (64 * (2 * k.val + 1) + 17)) := by
      refine (rv_extract d L g2 (k1_off92 k ⟨1, by decide⟩) _ _ 1 (by decide) _ _).trans ?_
      exact rv_word d L fl (wL L).val (2 * t1.val + 1) 1 (2 * k.val + 1) 17 (by decide) (by omega) (by decide) g2 hR1 _
        (by rw [k1_off92_eq]; show 128 * k.val + 16 * 1 + 1088 + 1 = 1024 * 1 + 64 * (2 * k.val + 1) + 17; omega) _
    have hw_v1739_4 : pair1_last.sl.v1739_4 d L k g2 = Spec.tcol (blkWord fl (wL L).val (2 * t1.val + 1) (64 * (2 * k.val + 1) + 18)) := by
      refine (rv_extract d L g2 (k1_off92 k ⟨1, by decide⟩) _ _ 2 (by decide) _ _).trans ?_
      exact rv_word d L fl (wL L).val (2 * t1.val + 1) 1 (2 * k.val + 1) 18 (by decide) (by omega) (by decide) g2 hR1 _
        (by rw [k1_off92_eq]; show 128 * k.val + 16 * 1 + 1088 + 2 = 1024 * 1 + 64 * (2 * k.val + 1) + 18; omega) _
    have hw_v1775_4 : pair1_last.sl.v1775_4 d L k g2 = Spec.tcol (blkWord fl (wL L).val (2 * t1.val + 1) (64 * (2 * k.val + 1) + 19)) := by
      refine (rv_extract d L g2 (k1_off92 k ⟨1, by decide⟩) _ _ 3 (by decide) _ _).trans ?_
      exact rv_word d L fl (wL L).val (2 * t1.val + 1) 1 (2 * k.val + 1) 19 (by decide) (by omega) (by decide) g2 hR1 _
        (by rw [k1_off92_eq]; show 128 * k.val + 16 * 1 + 1088 + 3 = 1024 * 1 + 64 * (2 * k.val + 1) + 19; omega) _
    have hw_v1811_4 : pair1_last.sl.v1811_4 d L k g2 = Spec.tcol (blkWord fl (wL L).val (2 * t1.val + 1) (64 * (2 * k.val + 1) + 20)) := by
      refine (rv_extract d L g2 (k1_off92 k ⟨1, by decide⟩) _ _ 4 (by decide) _ _).trans ?_
      exact rv_word d L fl (wL L).val (2 * t1.val + 1) 1 (2 * k.val + 1) 20 (by decide) (by omega) (by decide) g2 hR1 _
        (by rw [k1_off92_eq]; show 128 * k.val + 16 * 1 + 1088 + 4 = 1024 * 1 + 64 * (2 * k.val + 1) + 20; omega) _
    have hw_v1847_4 : pair1_last.sl.v1847_4 d L k g2 = Spec.tcol (blkWord fl (wL L).val (2 * t1.val + 1) (64 * (2 * k.val + 1) + 21)) := by
      refine (rv_extract d L g2 (k1_off92 k ⟨1, by decide⟩) _ _ 5 (by decide) _ _).trans ?_
      exact rv_word d L fl (wL L).val (2 * t1.val + 1) 1 (2 * k.val + 1) 21 (by decide) (by omega) (by decide) g2 hR1 _
        (by rw [k1_off92_eq]; show 128 * k.val + 16 * 1 + 1088 + 5 = 1024 * 1 + 64 * (2 * k.val + 1) + 21; omega) _
    have hw_v1883_4 : pair1_last.sl.v1883_4 d L k g2 = Spec.tcol (blkWord fl (wL L).val (2 * t1.val + 1) (64 * (2 * k.val + 1) + 22)) := by
      refine (rv_extract d L g2 (k1_off92 k ⟨1, by decide⟩) _ _ 6 (by decide) _ _).trans ?_
      exact rv_word d L fl (wL L).val (2 * t1.val + 1) 1 (2 * k.val + 1) 22 (by decide) (by omega) (by decide) g2 hR1 _
        (by rw [k1_off92_eq]; show 128 * k.val + 16 * 1 + 1088 + 6 = 1024 * 1 + 64 * (2 * k.val + 1) + 22; omega) _
    have hw_v1919_4 : pair1_last.sl.v1919_4 d L k g2 = Spec.tcol (blkWord fl (wL L).val (2 * t1.val + 1) (64 * (2 * k.val + 1) + 23)) := by
      refine (rv_extract d L g2 (k1_off92 k ⟨1, by decide⟩) _ _ 7 (by decide) _ _).trans ?_
      exact rv_word d L fl (wL L).val (2 * t1.val + 1) 1 (2 * k.val + 1) 23 (by decide) (by omega) (by decide) g2 hR1 _
        (by rw [k1_off92_eq]; show 128 * k.val + 16 * 1 + 1088 + 7 = 1024 * 1 + 64 * (2 * k.val + 1) + 23; omega) _
    have hw_v1955_4 : pair1_last.sl.v1955_4 d L k g2 = Spec.tcol (blkWord fl (wL L).val (2 * t1.val + 1) (64 * (2 * k.val + 1) + 24)) := by
      refine (rv_extract d L g2 (k1_off92 k ⟨1, by decide⟩) _ _ 8 (by decide) _ _).trans ?_
      exact rv_word d L fl (wL L).val (2 * t1.val + 1) 1 (2 * k.val + 1) 24 (by decide) (by omega) (by decide) g2 hR1 _
        (by rw [k1_off92_eq]; show 128 * k.val + 16 * 1 + 1088 + 8 = 1024 * 1 + 64 * (2 * k.val + 1) + 24; omega) _
    have hw_v1991_4 : pair1_last.sl.v1991_4 d L k g2 = Spec.tcol (blkWord fl (wL L).val (2 * t1.val + 1) (64 * (2 * k.val + 1) + 25)) := by
      refine (rv_extract d L g2 (k1_off92 k ⟨1, by decide⟩) _ _ 9 (by decide) _ _).trans ?_
      exact rv_word d L fl (wL L).val (2 * t1.val + 1) 1 (2 * k.val + 1) 25 (by decide) (by omega) (by decide) g2 hR1 _
        (by rw [k1_off92_eq]; show 128 * k.val + 16 * 1 + 1088 + 9 = 1024 * 1 + 64 * (2 * k.val + 1) + 25; omega) _
    have hw_v2027_4 : pair1_last.sl.v2027_4 d L k g2 = Spec.tcol (blkWord fl (wL L).val (2 * t1.val + 1) (64 * (2 * k.val + 1) + 26)) := by
      refine (rv_extract d L g2 (k1_off92 k ⟨1, by decide⟩) _ _ 10 (by decide) _ _).trans ?_
      exact rv_word d L fl (wL L).val (2 * t1.val + 1) 1 (2 * k.val + 1) 26 (by decide) (by omega) (by decide) g2 hR1 _
        (by rw [k1_off92_eq]; show 128 * k.val + 16 * 1 + 1088 + 10 = 1024 * 1 + 64 * (2 * k.val + 1) + 26; omega) _
    have hw_v2063_4 : pair1_last.sl.v2063_4 d L k g2 = Spec.tcol (blkWord fl (wL L).val (2 * t1.val + 1) (64 * (2 * k.val + 1) + 27)) := by
      refine (rv_extract d L g2 (k1_off92 k ⟨1, by decide⟩) _ _ 11 (by decide) _ _).trans ?_
      exact rv_word d L fl (wL L).val (2 * t1.val + 1) 1 (2 * k.val + 1) 27 (by decide) (by omega) (by decide) g2 hR1 _
        (by rw [k1_off92_eq]; show 128 * k.val + 16 * 1 + 1088 + 11 = 1024 * 1 + 64 * (2 * k.val + 1) + 27; omega) _
    have hw_v2099_4 : pair1_last.sl.v2099_4 d L k g2 = Spec.tcol (blkWord fl (wL L).val (2 * t1.val + 1) (64 * (2 * k.val + 1) + 28)) := by
      refine (rv_extract d L g2 (k1_off92 k ⟨1, by decide⟩) _ _ 12 (by decide) _ _).trans ?_
      exact rv_word d L fl (wL L).val (2 * t1.val + 1) 1 (2 * k.val + 1) 28 (by decide) (by omega) (by decide) g2 hR1 _
        (by rw [k1_off92_eq]; show 128 * k.val + 16 * 1 + 1088 + 12 = 1024 * 1 + 64 * (2 * k.val + 1) + 28; omega) _
    have hw_v2135_4 : pair1_last.sl.v2135_4 d L k g2 = Spec.tcol (blkWord fl (wL L).val (2 * t1.val + 1) (64 * (2 * k.val + 1) + 29)) := by
      refine (rv_extract d L g2 (k1_off92 k ⟨1, by decide⟩) _ _ 13 (by decide) _ _).trans ?_
      exact rv_word d L fl (wL L).val (2 * t1.val + 1) 1 (2 * k.val + 1) 29 (by decide) (by omega) (by decide) g2 hR1 _
        (by rw [k1_off92_eq]; show 128 * k.val + 16 * 1 + 1088 + 13 = 1024 * 1 + 64 * (2 * k.val + 1) + 29; omega) _
    have hw_v2171_4 : pair1_last.sl.v2171_4 d L k g2 = Spec.tcol (blkWord fl (wL L).val (2 * t1.val + 1) (64 * (2 * k.val + 1) + 30)) := by
      refine (rv_extract d L g2 (k1_off92 k ⟨1, by decide⟩) _ _ 14 (by decide) _ _).trans ?_
      exact rv_word d L fl (wL L).val (2 * t1.val + 1) 1 (2 * k.val + 1) 30 (by decide) (by omega) (by decide) g2 hR1 _
        (by rw [k1_off92_eq]; show 128 * k.val + 16 * 1 + 1088 + 14 = 1024 * 1 + 64 * (2 * k.val + 1) + 30; omega) _
    have hw_v2207_4 : pair1_last.sl.v2207_4 d L k g2 = Spec.tcol (blkWord fl (wL L).val (2 * t1.val + 1) (64 * (2 * k.val + 1) + 31)) := by
      refine (rv_extract d L g2 (k1_off92 k ⟨1, by decide⟩) _ _ 15 (by decide) _ _).trans ?_
      exact rv_word d L fl (wL L).val (2 * t1.val + 1) 1 (2 * k.val + 1) 31 (by decide) (by omega) (by decide) g2 hR1 _
        (by rw [k1_off92_eq]; show 128 * k.val + 16 * 1 + 1088 + 15 = 1024 * 1 + 64 * (2 * k.val + 1) + 31; omega) _
    have hw_v1667_5 : pair1_last.sl.v1667_5 d L k g2 = Spec.tcol (blkWord fl (wL L).val (2 * t1.val + 1) (64 * (2 * k.val + 1) + 32)) := by
      refine (rv_extract d L g2 (k1_off92 k ⟨2, by decide⟩) _ _ 0 (by decide) _ _).trans ?_
      exact rv_word d L fl (wL L).val (2 * t1.val + 1) 1 (2 * k.val + 1) 32 (by decide) (by omega) (by decide) g2 hR1 _
        (by rw [k1_off92_eq]; show 128 * k.val + 16 * 2 + 1088 + 0 = 1024 * 1 + 64 * (2 * k.val + 1) + 32; omega) _
    have hw_v1703_5 : pair1_last.sl.v1703_5 d L k g2 = Spec.tcol (blkWord fl (wL L).val (2 * t1.val + 1) (64 * (2 * k.val + 1) + 33)) := by
      refine (rv_extract d L g2 (k1_off92 k ⟨2, by decide⟩) _ _ 1 (by decide) _ _).trans ?_
      exact rv_word d L fl (wL L).val (2 * t1.val + 1) 1 (2 * k.val + 1) 33 (by decide) (by omega) (by decide) g2 hR1 _
        (by rw [k1_off92_eq]; show 128 * k.val + 16 * 2 + 1088 + 1 = 1024 * 1 + 64 * (2 * k.val + 1) + 33; omega) _
    have hw_v1739_5 : pair1_last.sl.v1739_5 d L k g2 = Spec.tcol (blkWord fl (wL L).val (2 * t1.val + 1) (64 * (2 * k.val + 1) + 34)) := by
      refine (rv_extract d L g2 (k1_off92 k ⟨2, by decide⟩) _ _ 2 (by decide) _ _).trans ?_
      exact rv_word d L fl (wL L).val (2 * t1.val + 1) 1 (2 * k.val + 1) 34 (by decide) (by omega) (by decide) g2 hR1 _
        (by rw [k1_off92_eq]; show 128 * k.val + 16 * 2 + 1088 + 2 = 1024 * 1 + 64 * (2 * k.val + 1) + 34; omega) _
    have hw_v1775_5 : pair1_last.sl.v1775_5 d L k g2 = Spec.tcol (blkWord fl (wL L).val (2 * t1.val + 1) (64 * (2 * k.val + 1) + 35)) := by
      refine (rv_extract d L g2 (k1_off92 k ⟨2, by decide⟩) _ _ 3 (by decide) _ _).trans ?_
      exact rv_word d L fl (wL L).val (2 * t1.val + 1) 1 (2 * k.val + 1) 35 (by decide) (by omega) (by decide) g2 hR1 _
        (by rw [k1_off92_eq]; show 128 * k.val + 16 * 2 + 1088 + 3 = 1024 * 1 + 64 * (2 * k.val + 1) + 35; omega) _
    have hw_v1811_5 : pair1_last.sl.v1811_5 d L k g2 = Spec.tcol (blkWord fl (wL L).val (2 * t1.val + 1) (64 * (2 * k.val + 1) + 36)) := by
      refine (rv_extract d L g2 (k1_off92 k ⟨2, by decide⟩) _ _ 4 (by decide) _ _).trans ?_
      exact rv_word d L fl (wL L).val (2 * t1.val + 1) 1 (2 * k.val + 1) 36 (by decide) (by omega) (by decide) g2 hR1 _
        (by rw [k1_off92_eq]; show 128 * k.val + 16 * 2 + 1088 + 4 = 1024 * 1 + 64 * (2 * k.val + 1) + 36; omega) _
    have hw_v1847_5 : pair1_last.sl.v1847_5 d L k g2 = Spec.tcol (blkWord fl (wL L).val (2 * t1.val + 1) (64 * (2 * k.val + 1) + 37)) := by
      refine (rv_extract d L g2 (k1_off92 k ⟨2, by decide⟩) _ _ 5 (by decide) _ _).trans ?_
      exact rv_word d L fl (wL L).val (2 * t1.val + 1) 1 (2 * k.val + 1) 37 (by decide) (by omega) (by decide) g2 hR1 _
        (by rw [k1_off92_eq]; show 128 * k.val + 16 * 2 + 1088 + 5 = 1024 * 1 + 64 * (2 * k.val + 1) + 37; omega) _
    have hw_v1883_5 : pair1_last.sl.v1883_5 d L k g2 = Spec.tcol (blkWord fl (wL L).val (2 * t1.val + 1) (64 * (2 * k.val + 1) + 38)) := by
      refine (rv_extract d L g2 (k1_off92 k ⟨2, by decide⟩) _ _ 6 (by decide) _ _).trans ?_
      exact rv_word d L fl (wL L).val (2 * t1.val + 1) 1 (2 * k.val + 1) 38 (by decide) (by omega) (by decide) g2 hR1 _
        (by rw [k1_off92_eq]; show 128 * k.val + 16 * 2 + 1088 + 6 = 1024 * 1 + 64 * (2 * k.val + 1) + 38; omega) _
    have hw_v1919_5 : pair1_last.sl.v1919_5 d L k g2 = Spec.tcol (blkWord fl (wL L).val (2 * t1.val + 1) (64 * (2 * k.val + 1) + 39)) := by
      refine (rv_extract d L g2 (k1_off92 k ⟨2, by decide⟩) _ _ 7 (by decide) _ _).trans ?_
      exact rv_word d L fl (wL L).val (2 * t1.val + 1) 1 (2 * k.val + 1) 39 (by decide) (by omega) (by decide) g2 hR1 _
        (by rw [k1_off92_eq]; show 128 * k.val + 16 * 2 + 1088 + 7 = 1024 * 1 + 64 * (2 * k.val + 1) + 39; omega) _
    have hw_v1955_5 : pair1_last.sl.v1955_5 d L k g2 = Spec.tcol (blkWord fl (wL L).val (2 * t1.val + 1) (64 * (2 * k.val + 1) + 40)) := by
      refine (rv_extract d L g2 (k1_off92 k ⟨2, by decide⟩) _ _ 8 (by decide) _ _).trans ?_
      exact rv_word d L fl (wL L).val (2 * t1.val + 1) 1 (2 * k.val + 1) 40 (by decide) (by omega) (by decide) g2 hR1 _
        (by rw [k1_off92_eq]; show 128 * k.val + 16 * 2 + 1088 + 8 = 1024 * 1 + 64 * (2 * k.val + 1) + 40; omega) _
    have hw_v1991_5 : pair1_last.sl.v1991_5 d L k g2 = Spec.tcol (blkWord fl (wL L).val (2 * t1.val + 1) (64 * (2 * k.val + 1) + 41)) := by
      refine (rv_extract d L g2 (k1_off92 k ⟨2, by decide⟩) _ _ 9 (by decide) _ _).trans ?_
      exact rv_word d L fl (wL L).val (2 * t1.val + 1) 1 (2 * k.val + 1) 41 (by decide) (by omega) (by decide) g2 hR1 _
        (by rw [k1_off92_eq]; show 128 * k.val + 16 * 2 + 1088 + 9 = 1024 * 1 + 64 * (2 * k.val + 1) + 41; omega) _
    have hw_v2027_5 : pair1_last.sl.v2027_5 d L k g2 = Spec.tcol (blkWord fl (wL L).val (2 * t1.val + 1) (64 * (2 * k.val + 1) + 42)) := by
      refine (rv_extract d L g2 (k1_off92 k ⟨2, by decide⟩) _ _ 10 (by decide) _ _).trans ?_
      exact rv_word d L fl (wL L).val (2 * t1.val + 1) 1 (2 * k.val + 1) 42 (by decide) (by omega) (by decide) g2 hR1 _
        (by rw [k1_off92_eq]; show 128 * k.val + 16 * 2 + 1088 + 10 = 1024 * 1 + 64 * (2 * k.val + 1) + 42; omega) _
    have hw_v2063_5 : pair1_last.sl.v2063_5 d L k g2 = Spec.tcol (blkWord fl (wL L).val (2 * t1.val + 1) (64 * (2 * k.val + 1) + 43)) := by
      refine (rv_extract d L g2 (k1_off92 k ⟨2, by decide⟩) _ _ 11 (by decide) _ _).trans ?_
      exact rv_word d L fl (wL L).val (2 * t1.val + 1) 1 (2 * k.val + 1) 43 (by decide) (by omega) (by decide) g2 hR1 _
        (by rw [k1_off92_eq]; show 128 * k.val + 16 * 2 + 1088 + 11 = 1024 * 1 + 64 * (2 * k.val + 1) + 43; omega) _
    have hw_v2099_5 : pair1_last.sl.v2099_5 d L k g2 = Spec.tcol (blkWord fl (wL L).val (2 * t1.val + 1) (64 * (2 * k.val + 1) + 44)) := by
      refine (rv_extract d L g2 (k1_off92 k ⟨2, by decide⟩) _ _ 12 (by decide) _ _).trans ?_
      exact rv_word d L fl (wL L).val (2 * t1.val + 1) 1 (2 * k.val + 1) 44 (by decide) (by omega) (by decide) g2 hR1 _
        (by rw [k1_off92_eq]; show 128 * k.val + 16 * 2 + 1088 + 12 = 1024 * 1 + 64 * (2 * k.val + 1) + 44; omega) _
    have hw_v2135_5 : pair1_last.sl.v2135_5 d L k g2 = Spec.tcol (blkWord fl (wL L).val (2 * t1.val + 1) (64 * (2 * k.val + 1) + 45)) := by
      refine (rv_extract d L g2 (k1_off92 k ⟨2, by decide⟩) _ _ 13 (by decide) _ _).trans ?_
      exact rv_word d L fl (wL L).val (2 * t1.val + 1) 1 (2 * k.val + 1) 45 (by decide) (by omega) (by decide) g2 hR1 _
        (by rw [k1_off92_eq]; show 128 * k.val + 16 * 2 + 1088 + 13 = 1024 * 1 + 64 * (2 * k.val + 1) + 45; omega) _
    have hw_v2171_5 : pair1_last.sl.v2171_5 d L k g2 = Spec.tcol (blkWord fl (wL L).val (2 * t1.val + 1) (64 * (2 * k.val + 1) + 46)) := by
      refine (rv_extract d L g2 (k1_off92 k ⟨2, by decide⟩) _ _ 14 (by decide) _ _).trans ?_
      exact rv_word d L fl (wL L).val (2 * t1.val + 1) 1 (2 * k.val + 1) 46 (by decide) (by omega) (by decide) g2 hR1 _
        (by rw [k1_off92_eq]; show 128 * k.val + 16 * 2 + 1088 + 14 = 1024 * 1 + 64 * (2 * k.val + 1) + 46; omega) _
    have hw_v2207_5 : pair1_last.sl.v2207_5 d L k g2 = Spec.tcol (blkWord fl (wL L).val (2 * t1.val + 1) (64 * (2 * k.val + 1) + 47)) := by
      refine (rv_extract d L g2 (k1_off92 k ⟨2, by decide⟩) _ _ 15 (by decide) _ _).trans ?_
      exact rv_word d L fl (wL L).val (2 * t1.val + 1) 1 (2 * k.val + 1) 47 (by decide) (by omega) (by decide) g2 hR1 _
        (by rw [k1_off92_eq]; show 128 * k.val + 16 * 2 + 1088 + 15 = 1024 * 1 + 64 * (2 * k.val + 1) + 47; omega) _
    have hw_v1572 : pair1_last.sl.v1572 d L k g2 = Spec.tcol (blkWord fl (wL L).val (2 * t1.val + 1) (64 * (2 * k.val + 1) + 48)) := by
      refine (rv_extract d L g2 (k1_off109 k) _ _ 0 (by decide) _ _).trans ?_
      exact rv_word d L fl (wL L).val (2 * t1.val + 1) 1 (2 * k.val + 1) 48 (by decide) (by omega) (by decide) g2 hR1 _
        (by rw [k1_off109_eq]; show 128 * k.val + 1136 + 0 = 1024 * 1 + 64 * (2 * k.val + 1) + 48; omega) _
    have hw_v1606 : pair1_last.sl.v1606 d L k g2 = Spec.tcol (blkWord fl (wL L).val (2 * t1.val + 1) (64 * (2 * k.val + 1) + 49)) := by
      refine (rv_extract d L g2 (k1_off109 k) _ _ 1 (by decide) _ _).trans ?_
      exact rv_word d L fl (wL L).val (2 * t1.val + 1) 1 (2 * k.val + 1) 49 (by decide) (by omega) (by decide) g2 hR1 _
        (by rw [k1_off109_eq]; show 128 * k.val + 1136 + 1 = 1024 * 1 + 64 * (2 * k.val + 1) + 49; omega) _
    have a_v1445_A0 : pair1_last.sl.v1445 = AccMath.accVec (rowF fl tab (wL L).val (2 * t1.val + 1) (2 * k.val)) (offF fl (wL L).val (2 * t1.val + 1) (2 * k.val)) 0 0 := acc_zero fl tab (wL L).val (2 * t1.val + 1) (2 * k.val) 0
    have a_v1675 : pair1_last.sl.v1675 d L tab k r g1 g2 hR hin = AccMath.accVec (rowF fl tab (wL L).val (2 * t1.val + 1) (2 * k.val)) (offF fl (wL L).val (2 * t1.val + 1) (2 * k.val)) 0 1 := by
      rw [show pair1_last.sl.v1675 d L tab k r g1 g2 hR hin = addf (pair1_last.sl.v1445) (pair1_last.sl.v1674 d L tab k r g1 g2 hR hin) from rfl, a_v1445_A0]
      exact acc_step d L fl tab (wL L).val (2 * t1.val + 1) (2 * k.val) 0 _ hRA ⟨0, by decide⟩ ⟨0, by decide⟩ _ rfl _ hw_v1667 _ (k1_off66_form ..) _ _
    have a_v1711 : pair1_last.sl.v1711 d L tab k r g1 g2 hR hin = AccMath.accVec (rowF fl tab (wL L).val (2 * t1.val + 1) (2 * k.val)) (offF fl (wL L).val (2 * t1.val + 1) (2 * k.val)) 0 2 := by
      rw [show pair1_last.sl.v1711 d L tab k r g1 g2 hR hin = addf (pair1_last.sl.v1675 d L tab k r g1 g2 hR hin) (pair1_last.sl.v1710 d L tab k r g1 g2 hR hin) from rfl, a_v1675]
      exact acc_step d L fl tab (wL L).val (2 * t1.val + 1) (2 * k.val) 0 _ hRA ⟨1, by decide⟩ ⟨0, by decide⟩ _ rfl _ hw_v1703 _ (k1_off67_form ..) _ _
    have a_v1747 : pair1_last.sl.v1747 d L tab k r g1 g2 hR hin = AccMath.accVec (rowF fl tab (wL L).val (2 * t1.val + 1) (2 * k.val)) (offF fl (wL L).val (2 * t1.val + 1) (2 * k.val)) 0 3 := by
      rw [show pair1_last.sl.v1747 d L tab k r g1 g2 hR hin = addf (pair1_last.sl.v1711 d L tab k r g1 g2 hR hin) (pair1_last.sl.v1746 d L tab k r g1 g2 hR hin) from rfl, a_v1711]
      exact acc_step d L fl tab (wL L).val (2 * t1.val + 1) (2 * k.val) 0 _ hRA ⟨2, by decide⟩ ⟨0, by decide⟩ _ rfl _ hw_v1739 _ (k1_off68_form ..) _ _
    have a_v1783 : pair1_last.sl.v1783 d L tab k r g1 g2 hR hin = AccMath.accVec (rowF fl tab (wL L).val (2 * t1.val + 1) (2 * k.val)) (offF fl (wL L).val (2 * t1.val + 1) (2 * k.val)) 0 4 := by
      rw [show pair1_last.sl.v1783 d L tab k r g1 g2 hR hin = addf (pair1_last.sl.v1747 d L tab k r g1 g2 hR hin) (pair1_last.sl.v1782 d L tab k r g1 g2 hR hin) from rfl, a_v1747]
      exact acc_step d L fl tab (wL L).val (2 * t1.val + 1) (2 * k.val) 0 _ hRA ⟨3, by decide⟩ ⟨0, by decide⟩ _ rfl _ hw_v1775 _ (k1_off69_form ..) _ _
    have a_v1819 : pair1_last.sl.v1819 d L tab k r g1 g2 hR hin = AccMath.accVec (rowF fl tab (wL L).val (2 * t1.val + 1) (2 * k.val)) (offF fl (wL L).val (2 * t1.val + 1) (2 * k.val)) 0 5 := by
      rw [show pair1_last.sl.v1819 d L tab k r g1 g2 hR hin = addf (pair1_last.sl.v1783 d L tab k r g1 g2 hR hin) (pair1_last.sl.v1818 d L tab k r g1 g2 hR hin) from rfl, a_v1783]
      exact acc_step d L fl tab (wL L).val (2 * t1.val + 1) (2 * k.val) 0 _ hRA ⟨4, by decide⟩ ⟨0, by decide⟩ _ rfl _ hw_v1811 _ (k1_off70_form ..) _ _
    have a_v1855 : pair1_last.sl.v1855 d L tab k r g1 g2 hR hin = AccMath.accVec (rowF fl tab (wL L).val (2 * t1.val + 1) (2 * k.val)) (offF fl (wL L).val (2 * t1.val + 1) (2 * k.val)) 0 6 := by
      rw [show pair1_last.sl.v1855 d L tab k r g1 g2 hR hin = addf (pair1_last.sl.v1819 d L tab k r g1 g2 hR hin) (pair1_last.sl.v1854 d L tab k r g1 g2 hR hin) from rfl, a_v1819]
      exact acc_step d L fl tab (wL L).val (2 * t1.val + 1) (2 * k.val) 0 _ hRA ⟨5, by decide⟩ ⟨0, by decide⟩ _ rfl _ hw_v1847 _ (k1_off71_form ..) _ _
    have a_v1891 : pair1_last.sl.v1891 d L tab k r g1 g2 hR hin = AccMath.accVec (rowF fl tab (wL L).val (2 * t1.val + 1) (2 * k.val)) (offF fl (wL L).val (2 * t1.val + 1) (2 * k.val)) 0 7 := by
      rw [show pair1_last.sl.v1891 d L tab k r g1 g2 hR hin = addf (pair1_last.sl.v1855 d L tab k r g1 g2 hR hin) (pair1_last.sl.v1890 d L tab k r g1 g2 hR hin) from rfl, a_v1855]
      exact acc_step d L fl tab (wL L).val (2 * t1.val + 1) (2 * k.val) 0 _ hRA ⟨6, by decide⟩ ⟨0, by decide⟩ _ rfl _ hw_v1883 _ (k1_off72_form ..) _ _
    have a_v1927 : pair1_last.sl.v1927 d L tab k r g1 g2 hR hin = AccMath.accVec (rowF fl tab (wL L).val (2 * t1.val + 1) (2 * k.val)) (offF fl (wL L).val (2 * t1.val + 1) (2 * k.val)) 0 8 := by
      rw [show pair1_last.sl.v1927 d L tab k r g1 g2 hR hin = addf (pair1_last.sl.v1891 d L tab k r g1 g2 hR hin) (pair1_last.sl.v1926 d L tab k r g1 g2 hR hin) from rfl, a_v1891]
      exact acc_step d L fl tab (wL L).val (2 * t1.val + 1) (2 * k.val) 0 _ hRA ⟨7, by decide⟩ ⟨0, by decide⟩ _ rfl _ hw_v1919 _ (k1_off73_form ..) _ _
    have a_v1963 : pair1_last.sl.v1963 d L tab k r g1 g2 hR hin = AccMath.accVec (rowF fl tab (wL L).val (2 * t1.val + 1) (2 * k.val)) (offF fl (wL L).val (2 * t1.val + 1) (2 * k.val)) 0 9 := by
      rw [show pair1_last.sl.v1963 d L tab k r g1 g2 hR hin = addf (pair1_last.sl.v1927 d L tab k r g1 g2 hR hin) (pair1_last.sl.v1962 d L tab k r g1 g2 hR hin) from rfl, a_v1927]
      exact acc_step d L fl tab (wL L).val (2 * t1.val + 1) (2 * k.val) 0 _ hRA ⟨8, by decide⟩ ⟨0, by decide⟩ _ rfl _ hw_v1955 _ (k1_off74_form ..) _ _
    have a_v1999 : pair1_last.sl.v1999 d L tab k r g1 g2 hR hin = AccMath.accVec (rowF fl tab (wL L).val (2 * t1.val + 1) (2 * k.val)) (offF fl (wL L).val (2 * t1.val + 1) (2 * k.val)) 0 10 := by
      rw [show pair1_last.sl.v1999 d L tab k r g1 g2 hR hin = addf (pair1_last.sl.v1963 d L tab k r g1 g2 hR hin) (pair1_last.sl.v1998 d L tab k r g1 g2 hR hin) from rfl, a_v1963]
      exact acc_step d L fl tab (wL L).val (2 * t1.val + 1) (2 * k.val) 0 _ hRA ⟨9, by decide⟩ ⟨0, by decide⟩ _ rfl _ hw_v1991 _ (k1_off75_form ..) _ _
    have a_v2035 : pair1_last.sl.v2035 d L tab k r g1 g2 hR hin = AccMath.accVec (rowF fl tab (wL L).val (2 * t1.val + 1) (2 * k.val)) (offF fl (wL L).val (2 * t1.val + 1) (2 * k.val)) 0 11 := by
      rw [show pair1_last.sl.v2035 d L tab k r g1 g2 hR hin = addf (pair1_last.sl.v1999 d L tab k r g1 g2 hR hin) (pair1_last.sl.v2034 d L tab k r g1 g2 hR hin) from rfl, a_v1999]
      exact acc_step d L fl tab (wL L).val (2 * t1.val + 1) (2 * k.val) 0 _ hRA ⟨10, by decide⟩ ⟨0, by decide⟩ _ rfl _ hw_v2027 _ (k1_off76_form ..) _ _
    have a_v2071 : pair1_last.sl.v2071 d L tab k r g1 g2 hR hin = AccMath.accVec (rowF fl tab (wL L).val (2 * t1.val + 1) (2 * k.val)) (offF fl (wL L).val (2 * t1.val + 1) (2 * k.val)) 0 12 := by
      rw [show pair1_last.sl.v2071 d L tab k r g1 g2 hR hin = addf (pair1_last.sl.v2035 d L tab k r g1 g2 hR hin) (pair1_last.sl.v2070 d L tab k r g1 g2 hR hin) from rfl, a_v2035]
      exact acc_step d L fl tab (wL L).val (2 * t1.val + 1) (2 * k.val) 0 _ hRA ⟨11, by decide⟩ ⟨0, by decide⟩ _ rfl _ hw_v2063 _ (k1_off77_form ..) _ _
    have a_v2107 : pair1_last.sl.v2107 d L tab k r g1 g2 hR hin = AccMath.accVec (rowF fl tab (wL L).val (2 * t1.val + 1) (2 * k.val)) (offF fl (wL L).val (2 * t1.val + 1) (2 * k.val)) 0 13 := by
      rw [show pair1_last.sl.v2107 d L tab k r g1 g2 hR hin = addf (pair1_last.sl.v2071 d L tab k r g1 g2 hR hin) (pair1_last.sl.v2106 d L tab k r g1 g2 hR hin) from rfl, a_v2071]
      exact acc_step d L fl tab (wL L).val (2 * t1.val + 1) (2 * k.val) 0 _ hRA ⟨12, by decide⟩ ⟨0, by decide⟩ _ rfl _ hw_v2099 _ (k1_off78_form ..) _ _
    have a_v2143 : pair1_last.sl.v2143 d L tab k r g1 g2 hR hin = AccMath.accVec (rowF fl tab (wL L).val (2 * t1.val + 1) (2 * k.val)) (offF fl (wL L).val (2 * t1.val + 1) (2 * k.val)) 0 14 := by
      rw [show pair1_last.sl.v2143 d L tab k r g1 g2 hR hin = addf (pair1_last.sl.v2107 d L tab k r g1 g2 hR hin) (pair1_last.sl.v2142 d L tab k r g1 g2 hR hin) from rfl, a_v2107]
      exact acc_step d L fl tab (wL L).val (2 * t1.val + 1) (2 * k.val) 0 _ hRA ⟨13, by decide⟩ ⟨0, by decide⟩ _ rfl _ hw_v2135 _ (k1_off79_form ..) _ _
    have a_v2179 : pair1_last.sl.v2179 d L tab k r g1 g2 hR hin = AccMath.accVec (rowF fl tab (wL L).val (2 * t1.val + 1) (2 * k.val)) (offF fl (wL L).val (2 * t1.val + 1) (2 * k.val)) 0 15 := by
      rw [show pair1_last.sl.v2179 d L tab k r g1 g2 hR hin = addf (pair1_last.sl.v2143 d L tab k r g1 g2 hR hin) (pair1_last.sl.v2178 d L tab k r g1 g2 hR hin) from rfl, a_v2143]
      exact acc_step d L fl tab (wL L).val (2 * t1.val + 1) (2 * k.val) 0 _ hRA ⟨14, by decide⟩ ⟨0, by decide⟩ _ rfl _ hw_v2171 _ (k1_off80_form ..) _ _
    have a_v2215 : pair1_last.sl.v2215 d L tab k r g1 g2 hR hin = AccMath.accVec (rowF fl tab (wL L).val (2 * t1.val + 1) (2 * k.val)) (offF fl (wL L).val (2 * t1.val + 1) (2 * k.val)) 0 16 := by
      rw [show pair1_last.sl.v2215 d L tab k r g1 g2 hR hin = addf (pair1_last.sl.v2179 d L tab k r g1 g2 hR hin) (pair1_last.sl.v2214 d L tab k r g1 g2 hR hin) from rfl, a_v2179]
      exact acc_step d L fl tab (wL L).val (2 * t1.val + 1) (2 * k.val) 0 _ hRA ⟨15, by decide⟩ ⟨0, by decide⟩ _ rfl _ hw_v2207 _ (k1_off81_form ..) _ _
    have a_v1675_1 : pair1_last.sl.v1675_1 d L tab k r g1 g2 hR hin = AccMath.accVec (rowF fl tab (wL L).val (2 * t1.val + 1) (2 * k.val)) (offF fl (wL L).val (2 * t1.val + 1) (2 * k.val)) 0 17 := by
      rw [show pair1_last.sl.v1675_1 d L tab k r g1 g2 hR hin = addf (pair1_last.sl.v2215 d L tab k r g1 g2 hR hin) (pair1_last.sl.v1674_1 d L tab k r g1 g2 hR hin) from rfl, a_v2215]
      exact acc_step d L fl tab (wL L).val (2 * t1.val + 1) (2 * k.val) 0 _ hRA ⟨16, by decide⟩ ⟨0, by decide⟩ _ rfl _ hw_v1667_1 _ (k1_off66_form ..) _ _
    have a_v1711_1 : pair1_last.sl.v1711_1 d L tab k r g1 g2 hR hin = AccMath.accVec (rowF fl tab (wL L).val (2 * t1.val + 1) (2 * k.val)) (offF fl (wL L).val (2 * t1.val + 1) (2 * k.val)) 0 18 := by
      rw [show pair1_last.sl.v1711_1 d L tab k r g1 g2 hR hin = addf (pair1_last.sl.v1675_1 d L tab k r g1 g2 hR hin) (pair1_last.sl.v1710_1 d L tab k r g1 g2 hR hin) from rfl, a_v1675_1]
      exact acc_step d L fl tab (wL L).val (2 * t1.val + 1) (2 * k.val) 0 _ hRA ⟨17, by decide⟩ ⟨0, by decide⟩ _ rfl _ hw_v1703_1 _ (k1_off67_form ..) _ _
    have a_v1747_1 : pair1_last.sl.v1747_1 d L tab k r g1 g2 hR hin = AccMath.accVec (rowF fl tab (wL L).val (2 * t1.val + 1) (2 * k.val)) (offF fl (wL L).val (2 * t1.val + 1) (2 * k.val)) 0 19 := by
      rw [show pair1_last.sl.v1747_1 d L tab k r g1 g2 hR hin = addf (pair1_last.sl.v1711_1 d L tab k r g1 g2 hR hin) (pair1_last.sl.v1746_1 d L tab k r g1 g2 hR hin) from rfl, a_v1711_1]
      exact acc_step d L fl tab (wL L).val (2 * t1.val + 1) (2 * k.val) 0 _ hRA ⟨18, by decide⟩ ⟨0, by decide⟩ _ rfl _ hw_v1739_1 _ (k1_off68_form ..) _ _
    have a_v1783_1 : pair1_last.sl.v1783_1 d L tab k r g1 g2 hR hin = AccMath.accVec (rowF fl tab (wL L).val (2 * t1.val + 1) (2 * k.val)) (offF fl (wL L).val (2 * t1.val + 1) (2 * k.val)) 0 20 := by
      rw [show pair1_last.sl.v1783_1 d L tab k r g1 g2 hR hin = addf (pair1_last.sl.v1747_1 d L tab k r g1 g2 hR hin) (pair1_last.sl.v1782_1 d L tab k r g1 g2 hR hin) from rfl, a_v1747_1]
      exact acc_step d L fl tab (wL L).val (2 * t1.val + 1) (2 * k.val) 0 _ hRA ⟨19, by decide⟩ ⟨0, by decide⟩ _ rfl _ hw_v1775_1 _ (k1_off69_form ..) _ _
    have a_v1819_1 : pair1_last.sl.v1819_1 d L tab k r g1 g2 hR hin = AccMath.accVec (rowF fl tab (wL L).val (2 * t1.val + 1) (2 * k.val)) (offF fl (wL L).val (2 * t1.val + 1) (2 * k.val)) 0 21 := by
      rw [show pair1_last.sl.v1819_1 d L tab k r g1 g2 hR hin = addf (pair1_last.sl.v1783_1 d L tab k r g1 g2 hR hin) (pair1_last.sl.v1818_1 d L tab k r g1 g2 hR hin) from rfl, a_v1783_1]
      exact acc_step d L fl tab (wL L).val (2 * t1.val + 1) (2 * k.val) 0 _ hRA ⟨20, by decide⟩ ⟨0, by decide⟩ _ rfl _ hw_v1811_1 _ (k1_off70_form ..) _ _
    have a_v1855_1 : pair1_last.sl.v1855_1 d L tab k r g1 g2 hR hin = AccMath.accVec (rowF fl tab (wL L).val (2 * t1.val + 1) (2 * k.val)) (offF fl (wL L).val (2 * t1.val + 1) (2 * k.val)) 0 22 := by
      rw [show pair1_last.sl.v1855_1 d L tab k r g1 g2 hR hin = addf (pair1_last.sl.v1819_1 d L tab k r g1 g2 hR hin) (pair1_last.sl.v1854_1 d L tab k r g1 g2 hR hin) from rfl, a_v1819_1]
      exact acc_step d L fl tab (wL L).val (2 * t1.val + 1) (2 * k.val) 0 _ hRA ⟨21, by decide⟩ ⟨0, by decide⟩ _ rfl _ hw_v1847_1 _ (k1_off71_form ..) _ _
    have a_v1891_1 : pair1_last.sl.v1891_1 d L tab k r g1 g2 hR hin = AccMath.accVec (rowF fl tab (wL L).val (2 * t1.val + 1) (2 * k.val)) (offF fl (wL L).val (2 * t1.val + 1) (2 * k.val)) 0 23 := by
      rw [show pair1_last.sl.v1891_1 d L tab k r g1 g2 hR hin = addf (pair1_last.sl.v1855_1 d L tab k r g1 g2 hR hin) (pair1_last.sl.v1890_1 d L tab k r g1 g2 hR hin) from rfl, a_v1855_1]
      exact acc_step d L fl tab (wL L).val (2 * t1.val + 1) (2 * k.val) 0 _ hRA ⟨22, by decide⟩ ⟨0, by decide⟩ _ rfl _ hw_v1883_1 _ (k1_off72_form ..) _ _
    have a_v1927_1 : pair1_last.sl.v1927_1 d L tab k r g1 g2 hR hin = AccMath.accVec (rowF fl tab (wL L).val (2 * t1.val + 1) (2 * k.val)) (offF fl (wL L).val (2 * t1.val + 1) (2 * k.val)) 0 24 := by
      rw [show pair1_last.sl.v1927_1 d L tab k r g1 g2 hR hin = addf (pair1_last.sl.v1891_1 d L tab k r g1 g2 hR hin) (pair1_last.sl.v1926_1 d L tab k r g1 g2 hR hin) from rfl, a_v1891_1]
      exact acc_step d L fl tab (wL L).val (2 * t1.val + 1) (2 * k.val) 0 _ hRA ⟨23, by decide⟩ ⟨0, by decide⟩ _ rfl _ hw_v1919_1 _ (k1_off73_form ..) _ _
    have a_v1963_1 : pair1_last.sl.v1963_1 d L tab k r g1 g2 hR hin = AccMath.accVec (rowF fl tab (wL L).val (2 * t1.val + 1) (2 * k.val)) (offF fl (wL L).val (2 * t1.val + 1) (2 * k.val)) 0 25 := by
      rw [show pair1_last.sl.v1963_1 d L tab k r g1 g2 hR hin = addf (pair1_last.sl.v1927_1 d L tab k r g1 g2 hR hin) (pair1_last.sl.v1962_1 d L tab k r g1 g2 hR hin) from rfl, a_v1927_1]
      exact acc_step d L fl tab (wL L).val (2 * t1.val + 1) (2 * k.val) 0 _ hRA ⟨24, by decide⟩ ⟨0, by decide⟩ _ rfl _ hw_v1955_1 _ (k1_off74_form ..) _ _
    have a_v1999_1 : pair1_last.sl.v1999_1 d L tab k r g1 g2 hR hin = AccMath.accVec (rowF fl tab (wL L).val (2 * t1.val + 1) (2 * k.val)) (offF fl (wL L).val (2 * t1.val + 1) (2 * k.val)) 0 26 := by
      rw [show pair1_last.sl.v1999_1 d L tab k r g1 g2 hR hin = addf (pair1_last.sl.v1963_1 d L tab k r g1 g2 hR hin) (pair1_last.sl.v1998_1 d L tab k r g1 g2 hR hin) from rfl, a_v1963_1]
      exact acc_step d L fl tab (wL L).val (2 * t1.val + 1) (2 * k.val) 0 _ hRA ⟨25, by decide⟩ ⟨0, by decide⟩ _ rfl _ hw_v1991_1 _ (k1_off75_form ..) _ _
    have a_v2035_1 : pair1_last.sl.v2035_1 d L tab k r g1 g2 hR hin = AccMath.accVec (rowF fl tab (wL L).val (2 * t1.val + 1) (2 * k.val)) (offF fl (wL L).val (2 * t1.val + 1) (2 * k.val)) 0 27 := by
      rw [show pair1_last.sl.v2035_1 d L tab k r g1 g2 hR hin = addf (pair1_last.sl.v1999_1 d L tab k r g1 g2 hR hin) (pair1_last.sl.v2034_1 d L tab k r g1 g2 hR hin) from rfl, a_v1999_1]
      exact acc_step d L fl tab (wL L).val (2 * t1.val + 1) (2 * k.val) 0 _ hRA ⟨26, by decide⟩ ⟨0, by decide⟩ _ rfl _ hw_v2027_1 _ (k1_off76_form ..) _ _
    have a_v2071_1 : pair1_last.sl.v2071_1 d L tab k r g1 g2 hR hin = AccMath.accVec (rowF fl tab (wL L).val (2 * t1.val + 1) (2 * k.val)) (offF fl (wL L).val (2 * t1.val + 1) (2 * k.val)) 0 28 := by
      rw [show pair1_last.sl.v2071_1 d L tab k r g1 g2 hR hin = addf (pair1_last.sl.v2035_1 d L tab k r g1 g2 hR hin) (pair1_last.sl.v2070_1 d L tab k r g1 g2 hR hin) from rfl, a_v2035_1]
      exact acc_step d L fl tab (wL L).val (2 * t1.val + 1) (2 * k.val) 0 _ hRA ⟨27, by decide⟩ ⟨0, by decide⟩ _ rfl _ hw_v2063_1 _ (k1_off77_form ..) _ _
    have a_v2107_1 : pair1_last.sl.v2107_1 d L tab k r g1 g2 hR hin = AccMath.accVec (rowF fl tab (wL L).val (2 * t1.val + 1) (2 * k.val)) (offF fl (wL L).val (2 * t1.val + 1) (2 * k.val)) 0 29 := by
      rw [show pair1_last.sl.v2107_1 d L tab k r g1 g2 hR hin = addf (pair1_last.sl.v2071_1 d L tab k r g1 g2 hR hin) (pair1_last.sl.v2106_1 d L tab k r g1 g2 hR hin) from rfl, a_v2071_1]
      exact acc_step d L fl tab (wL L).val (2 * t1.val + 1) (2 * k.val) 0 _ hRA ⟨28, by decide⟩ ⟨0, by decide⟩ _ rfl _ hw_v2099_1 _ (k1_off78_form ..) _ _
    have a_v2143_1 : pair1_last.sl.v2143_1 d L tab k r g1 g2 hR hin = AccMath.accVec (rowF fl tab (wL L).val (2 * t1.val + 1) (2 * k.val)) (offF fl (wL L).val (2 * t1.val + 1) (2 * k.val)) 0 30 := by
      rw [show pair1_last.sl.v2143_1 d L tab k r g1 g2 hR hin = addf (pair1_last.sl.v2107_1 d L tab k r g1 g2 hR hin) (pair1_last.sl.v2142_1 d L tab k r g1 g2 hR hin) from rfl, a_v2107_1]
      exact acc_step d L fl tab (wL L).val (2 * t1.val + 1) (2 * k.val) 0 _ hRA ⟨29, by decide⟩ ⟨0, by decide⟩ _ rfl _ hw_v2135_1 _ (k1_off79_form ..) _ _
    have a_v2179_1 : pair1_last.sl.v2179_1 d L tab k r g1 g2 hR hin = AccMath.accVec (rowF fl tab (wL L).val (2 * t1.val + 1) (2 * k.val)) (offF fl (wL L).val (2 * t1.val + 1) (2 * k.val)) 0 31 := by
      rw [show pair1_last.sl.v2179_1 d L tab k r g1 g2 hR hin = addf (pair1_last.sl.v2143_1 d L tab k r g1 g2 hR hin) (pair1_last.sl.v2178_1 d L tab k r g1 g2 hR hin) from rfl, a_v2143_1]
      exact acc_step d L fl tab (wL L).val (2 * t1.val + 1) (2 * k.val) 0 _ hRA ⟨30, by decide⟩ ⟨0, by decide⟩ _ rfl _ hw_v2171_1 _ (k1_off80_form ..) _ _
    have a_v2215_1 : pair1_last.sl.v2215_1 d L tab k r g1 g2 hR hin = AccMath.accVec (rowF fl tab (wL L).val (2 * t1.val + 1) (2 * k.val)) (offF fl (wL L).val (2 * t1.val + 1) (2 * k.val)) 0 32 := by
      rw [show pair1_last.sl.v2215_1 d L tab k r g1 g2 hR hin = addf (pair1_last.sl.v2179_1 d L tab k r g1 g2 hR hin) (pair1_last.sl.v2214_1 d L tab k r g1 g2 hR hin) from rfl, a_v2179_1]
      exact acc_step d L fl tab (wL L).val (2 * t1.val + 1) (2 * k.val) 0 _ hRA ⟨31, by decide⟩ ⟨0, by decide⟩ _ rfl _ hw_v2207_1 _ (k1_off81_form ..) _ _
    have a_v1675_2 : pair1_last.sl.v1675_2 d L tab k r g1 g2 hR hin = AccMath.accVec (rowF fl tab (wL L).val (2 * t1.val + 1) (2 * k.val)) (offF fl (wL L).val (2 * t1.val + 1) (2 * k.val)) 0 33 := by
      rw [show pair1_last.sl.v1675_2 d L tab k r g1 g2 hR hin = addf (pair1_last.sl.v2215_1 d L tab k r g1 g2 hR hin) (pair1_last.sl.v1674_2 d L tab k r g1 g2 hR hin) from rfl, a_v2215_1]
      exact acc_step d L fl tab (wL L).val (2 * t1.val + 1) (2 * k.val) 0 _ hRA ⟨32, by decide⟩ ⟨0, by decide⟩ _ rfl _ hw_v1667_2 _ (k1_off66_form ..) _ _
    have a_v1711_2 : pair1_last.sl.v1711_2 d L tab k r g1 g2 hR hin = AccMath.accVec (rowF fl tab (wL L).val (2 * t1.val + 1) (2 * k.val)) (offF fl (wL L).val (2 * t1.val + 1) (2 * k.val)) 0 34 := by
      rw [show pair1_last.sl.v1711_2 d L tab k r g1 g2 hR hin = addf (pair1_last.sl.v1675_2 d L tab k r g1 g2 hR hin) (pair1_last.sl.v1710_2 d L tab k r g1 g2 hR hin) from rfl, a_v1675_2]
      exact acc_step d L fl tab (wL L).val (2 * t1.val + 1) (2 * k.val) 0 _ hRA ⟨33, by decide⟩ ⟨0, by decide⟩ _ rfl _ hw_v1703_2 _ (k1_off67_form ..) _ _
    have a_v1747_2 : pair1_last.sl.v1747_2 d L tab k r g1 g2 hR hin = AccMath.accVec (rowF fl tab (wL L).val (2 * t1.val + 1) (2 * k.val)) (offF fl (wL L).val (2 * t1.val + 1) (2 * k.val)) 0 35 := by
      rw [show pair1_last.sl.v1747_2 d L tab k r g1 g2 hR hin = addf (pair1_last.sl.v1711_2 d L tab k r g1 g2 hR hin) (pair1_last.sl.v1746_2 d L tab k r g1 g2 hR hin) from rfl, a_v1711_2]
      exact acc_step d L fl tab (wL L).val (2 * t1.val + 1) (2 * k.val) 0 _ hRA ⟨34, by decide⟩ ⟨0, by decide⟩ _ rfl _ hw_v1739_2 _ (k1_off68_form ..) _ _
    have a_v1783_2 : pair1_last.sl.v1783_2 d L tab k r g1 g2 hR hin = AccMath.accVec (rowF fl tab (wL L).val (2 * t1.val + 1) (2 * k.val)) (offF fl (wL L).val (2 * t1.val + 1) (2 * k.val)) 0 36 := by
      rw [show pair1_last.sl.v1783_2 d L tab k r g1 g2 hR hin = addf (pair1_last.sl.v1747_2 d L tab k r g1 g2 hR hin) (pair1_last.sl.v1782_2 d L tab k r g1 g2 hR hin) from rfl, a_v1747_2]
      exact acc_step d L fl tab (wL L).val (2 * t1.val + 1) (2 * k.val) 0 _ hRA ⟨35, by decide⟩ ⟨0, by decide⟩ _ rfl _ hw_v1775_2 _ (k1_off69_form ..) _ _
    have a_v1819_2 : pair1_last.sl.v1819_2 d L tab k r g1 g2 hR hin = AccMath.accVec (rowF fl tab (wL L).val (2 * t1.val + 1) (2 * k.val)) (offF fl (wL L).val (2 * t1.val + 1) (2 * k.val)) 0 37 := by
      rw [show pair1_last.sl.v1819_2 d L tab k r g1 g2 hR hin = addf (pair1_last.sl.v1783_2 d L tab k r g1 g2 hR hin) (pair1_last.sl.v1818_2 d L tab k r g1 g2 hR hin) from rfl, a_v1783_2]
      exact acc_step d L fl tab (wL L).val (2 * t1.val + 1) (2 * k.val) 0 _ hRA ⟨36, by decide⟩ ⟨0, by decide⟩ _ rfl _ hw_v1811_2 _ (k1_off70_form ..) _ _
    have a_v1855_2 : pair1_last.sl.v1855_2 d L tab k r g1 g2 hR hin = AccMath.accVec (rowF fl tab (wL L).val (2 * t1.val + 1) (2 * k.val)) (offF fl (wL L).val (2 * t1.val + 1) (2 * k.val)) 0 38 := by
      rw [show pair1_last.sl.v1855_2 d L tab k r g1 g2 hR hin = addf (pair1_last.sl.v1819_2 d L tab k r g1 g2 hR hin) (pair1_last.sl.v1854_2 d L tab k r g1 g2 hR hin) from rfl, a_v1819_2]
      exact acc_step d L fl tab (wL L).val (2 * t1.val + 1) (2 * k.val) 0 _ hRA ⟨37, by decide⟩ ⟨0, by decide⟩ _ rfl _ hw_v1847_2 _ (k1_off71_form ..) _ _
    have a_v1891_2 : pair1_last.sl.v1891_2 d L tab k r g1 g2 hR hin = AccMath.accVec (rowF fl tab (wL L).val (2 * t1.val + 1) (2 * k.val)) (offF fl (wL L).val (2 * t1.val + 1) (2 * k.val)) 0 39 := by
      rw [show pair1_last.sl.v1891_2 d L tab k r g1 g2 hR hin = addf (pair1_last.sl.v1855_2 d L tab k r g1 g2 hR hin) (pair1_last.sl.v1890_2 d L tab k r g1 g2 hR hin) from rfl, a_v1855_2]
      exact acc_step d L fl tab (wL L).val (2 * t1.val + 1) (2 * k.val) 0 _ hRA ⟨38, by decide⟩ ⟨0, by decide⟩ _ rfl _ hw_v1883_2 _ (k1_off72_form ..) _ _
    have a_v1927_2 : pair1_last.sl.v1927_2 d L tab k r g1 g2 hR hin = AccMath.accVec (rowF fl tab (wL L).val (2 * t1.val + 1) (2 * k.val)) (offF fl (wL L).val (2 * t1.val + 1) (2 * k.val)) 0 40 := by
      rw [show pair1_last.sl.v1927_2 d L tab k r g1 g2 hR hin = addf (pair1_last.sl.v1891_2 d L tab k r g1 g2 hR hin) (pair1_last.sl.v1926_2 d L tab k r g1 g2 hR hin) from rfl, a_v1891_2]
      exact acc_step d L fl tab (wL L).val (2 * t1.val + 1) (2 * k.val) 0 _ hRA ⟨39, by decide⟩ ⟨0, by decide⟩ _ rfl _ hw_v1919_2 _ (k1_off73_form ..) _ _
    have a_v1963_2 : pair1_last.sl.v1963_2 d L tab k r g1 g2 hR hin = AccMath.accVec (rowF fl tab (wL L).val (2 * t1.val + 1) (2 * k.val)) (offF fl (wL L).val (2 * t1.val + 1) (2 * k.val)) 0 41 := by
      rw [show pair1_last.sl.v1963_2 d L tab k r g1 g2 hR hin = addf (pair1_last.sl.v1927_2 d L tab k r g1 g2 hR hin) (pair1_last.sl.v1962_2 d L tab k r g1 g2 hR hin) from rfl, a_v1927_2]
      exact acc_step d L fl tab (wL L).val (2 * t1.val + 1) (2 * k.val) 0 _ hRA ⟨40, by decide⟩ ⟨0, by decide⟩ _ rfl _ hw_v1955_2 _ (k1_off74_form ..) _ _
    have a_v1999_2 : pair1_last.sl.v1999_2 d L tab k r g1 g2 hR hin = AccMath.accVec (rowF fl tab (wL L).val (2 * t1.val + 1) (2 * k.val)) (offF fl (wL L).val (2 * t1.val + 1) (2 * k.val)) 0 42 := by
      rw [show pair1_last.sl.v1999_2 d L tab k r g1 g2 hR hin = addf (pair1_last.sl.v1963_2 d L tab k r g1 g2 hR hin) (pair1_last.sl.v1998_2 d L tab k r g1 g2 hR hin) from rfl, a_v1963_2]
      exact acc_step d L fl tab (wL L).val (2 * t1.val + 1) (2 * k.val) 0 _ hRA ⟨41, by decide⟩ ⟨0, by decide⟩ _ rfl _ hw_v1991_2 _ (k1_off75_form ..) _ _
    have a_v2035_2 : pair1_last.sl.v2035_2 d L tab k r g1 g2 hR hin = AccMath.accVec (rowF fl tab (wL L).val (2 * t1.val + 1) (2 * k.val)) (offF fl (wL L).val (2 * t1.val + 1) (2 * k.val)) 0 43 := by
      rw [show pair1_last.sl.v2035_2 d L tab k r g1 g2 hR hin = addf (pair1_last.sl.v1999_2 d L tab k r g1 g2 hR hin) (pair1_last.sl.v2034_2 d L tab k r g1 g2 hR hin) from rfl, a_v1999_2]
      exact acc_step d L fl tab (wL L).val (2 * t1.val + 1) (2 * k.val) 0 _ hRA ⟨42, by decide⟩ ⟨0, by decide⟩ _ rfl _ hw_v2027_2 _ (k1_off76_form ..) _ _
    have a_v2071_2 : pair1_last.sl.v2071_2 d L tab k r g1 g2 hR hin = AccMath.accVec (rowF fl tab (wL L).val (2 * t1.val + 1) (2 * k.val)) (offF fl (wL L).val (2 * t1.val + 1) (2 * k.val)) 0 44 := by
      rw [show pair1_last.sl.v2071_2 d L tab k r g1 g2 hR hin = addf (pair1_last.sl.v2035_2 d L tab k r g1 g2 hR hin) (pair1_last.sl.v2070_2 d L tab k r g1 g2 hR hin) from rfl, a_v2035_2]
      exact acc_step d L fl tab (wL L).val (2 * t1.val + 1) (2 * k.val) 0 _ hRA ⟨43, by decide⟩ ⟨0, by decide⟩ _ rfl _ hw_v2063_2 _ (k1_off77_form ..) _ _
    have a_v2107_2 : pair1_last.sl.v2107_2 d L tab k r g1 g2 hR hin = AccMath.accVec (rowF fl tab (wL L).val (2 * t1.val + 1) (2 * k.val)) (offF fl (wL L).val (2 * t1.val + 1) (2 * k.val)) 0 45 := by
      rw [show pair1_last.sl.v2107_2 d L tab k r g1 g2 hR hin = addf (pair1_last.sl.v2071_2 d L tab k r g1 g2 hR hin) (pair1_last.sl.v2106_2 d L tab k r g1 g2 hR hin) from rfl, a_v2071_2]
      exact acc_step d L fl tab (wL L).val (2 * t1.val + 1) (2 * k.val) 0 _ hRA ⟨44, by decide⟩ ⟨0, by decide⟩ _ rfl _ hw_v2099_2 _ (k1_off78_form ..) _ _
    have a_v2143_2 : pair1_last.sl.v2143_2 d L tab k r g1 g2 hR hin = AccMath.accVec (rowF fl tab (wL L).val (2 * t1.val + 1) (2 * k.val)) (offF fl (wL L).val (2 * t1.val + 1) (2 * k.val)) 0 46 := by
      rw [show pair1_last.sl.v2143_2 d L tab k r g1 g2 hR hin = addf (pair1_last.sl.v2107_2 d L tab k r g1 g2 hR hin) (pair1_last.sl.v2142_2 d L tab k r g1 g2 hR hin) from rfl, a_v2107_2]
      exact acc_step d L fl tab (wL L).val (2 * t1.val + 1) (2 * k.val) 0 _ hRA ⟨45, by decide⟩ ⟨0, by decide⟩ _ rfl _ hw_v2135_2 _ (k1_off79_form ..) _ _
    have a_v2179_2 : pair1_last.sl.v2179_2 d L tab k r g1 g2 hR hin = AccMath.accVec (rowF fl tab (wL L).val (2 * t1.val + 1) (2 * k.val)) (offF fl (wL L).val (2 * t1.val + 1) (2 * k.val)) 0 47 := by
      rw [show pair1_last.sl.v2179_2 d L tab k r g1 g2 hR hin = addf (pair1_last.sl.v2143_2 d L tab k r g1 g2 hR hin) (pair1_last.sl.v2178_2 d L tab k r g1 g2 hR hin) from rfl, a_v2143_2]
      exact acc_step d L fl tab (wL L).val (2 * t1.val + 1) (2 * k.val) 0 _ hRA ⟨46, by decide⟩ ⟨0, by decide⟩ _ rfl _ hw_v2171_2 _ (k1_off80_form ..) _ _
    have a_v2215_2 : pair1_last.sl.v2215_2 d L tab k r g1 g2 hR hin = AccMath.accVec (rowF fl tab (wL L).val (2 * t1.val + 1) (2 * k.val)) (offF fl (wL L).val (2 * t1.val + 1) (2 * k.val)) 0 48 := by
      rw [show pair1_last.sl.v2215_2 d L tab k r g1 g2 hR hin = addf (pair1_last.sl.v2179_2 d L tab k r g1 g2 hR hin) (pair1_last.sl.v2214_2 d L tab k r g1 g2 hR hin) from rfl, a_v2179_2]
      exact acc_step d L fl tab (wL L).val (2 * t1.val + 1) (2 * k.val) 0 _ hRA ⟨47, by decide⟩ ⟨0, by decide⟩ _ rfl _ hw_v2207_2 _ (k1_off81_form ..) _ _
    have a_v1464 : pair1_last.sl.v1464 d L tab k r g1 g2 hR hin = AccMath.accVec (rowF fl tab (wL L).val (2 * t1.val + 1) (2 * k.val)) (offF fl (wL L).val (2 * t1.val + 1) (2 * k.val)) 0 49 := by
      rw [show pair1_last.sl.v1464 d L tab k r g1 g2 hR hin = addf (pair1_last.sl.v2215_2 d L tab k r g1 g2 hR hin) (pair1_last.sl.v1463 d L tab k r g1 g2 hR hin) from rfl, a_v2215_2]
      exact acc_step d L fl tab (wL L).val (2 * t1.val + 1) (2 * k.val) 0 _ hRA ⟨48, by decide⟩ ⟨0, by decide⟩ _ rfl _ hw_v1456 _ (k1_off83_form ..) _ _
    have a_v1498 : pair1_last.sl.v1498 d L tab k r g1 g2 hR hin = AccMath.accVec (rowF fl tab (wL L).val (2 * t1.val + 1) (2 * k.val)) (offF fl (wL L).val (2 * t1.val + 1) (2 * k.val)) 0 50 := by
      rw [show pair1_last.sl.v1498 d L tab k r g1 g2 hR hin = addf (pair1_last.sl.v1464 d L tab k r g1 g2 hR hin) (pair1_last.sl.v1497 d L tab k r g1 g2 hR hin) from rfl, a_v1464]
      exact acc_step d L fl tab (wL L).val (2 * t1.val + 1) (2 * k.val) 0 _ hRA ⟨49, by decide⟩ ⟨0, by decide⟩ _ rfl _ hw_v1490 _ (k1_off84_form ..) _ _
    have a_v1445_A1 : pair1_last.sl.v1445 = AccMath.accVec (rowF fl tab (wL L).val (2 * t1.val + 1) (2 * k.val)) (offF fl (wL L).val (2 * t1.val + 1) (2 * k.val)) 1 0 := acc_zero fl tab (wL L).val (2 * t1.val + 1) (2 * k.val) 1
    have a_v1683 : pair1_last.sl.v1683 d L tab k r g1 g2 hR hin = AccMath.accVec (rowF fl tab (wL L).val (2 * t1.val + 1) (2 * k.val)) (offF fl (wL L).val (2 * t1.val + 1) (2 * k.val)) 1 1 := by
      rw [show pair1_last.sl.v1683 d L tab k r g1 g2 hR hin = addf (pair1_last.sl.v1445) (pair1_last.sl.v1682 d L tab k r g1 g2 hR hin) from rfl, a_v1445_A1]
      exact acc_step d L fl tab (wL L).val (2 * t1.val + 1) (2 * k.val) 0 _ hRA ⟨0, by decide⟩ ⟨1, by decide⟩ _ rfl _ hw_v1667 _ (k1_off66_form ..) _ _
    have a_v1719 : pair1_last.sl.v1719 d L tab k r g1 g2 hR hin = AccMath.accVec (rowF fl tab (wL L).val (2 * t1.val + 1) (2 * k.val)) (offF fl (wL L).val (2 * t1.val + 1) (2 * k.val)) 1 2 := by
      rw [show pair1_last.sl.v1719 d L tab k r g1 g2 hR hin = addf (pair1_last.sl.v1683 d L tab k r g1 g2 hR hin) (pair1_last.sl.v1718 d L tab k r g1 g2 hR hin) from rfl, a_v1683]
      exact acc_step d L fl tab (wL L).val (2 * t1.val + 1) (2 * k.val) 0 _ hRA ⟨1, by decide⟩ ⟨1, by decide⟩ _ rfl _ hw_v1703 _ (k1_off67_form ..) _ _
    have a_v1755 : pair1_last.sl.v1755 d L tab k r g1 g2 hR hin = AccMath.accVec (rowF fl tab (wL L).val (2 * t1.val + 1) (2 * k.val)) (offF fl (wL L).val (2 * t1.val + 1) (2 * k.val)) 1 3 := by
      rw [show pair1_last.sl.v1755 d L tab k r g1 g2 hR hin = addf (pair1_last.sl.v1719 d L tab k r g1 g2 hR hin) (pair1_last.sl.v1754 d L tab k r g1 g2 hR hin) from rfl, a_v1719]
      exact acc_step d L fl tab (wL L).val (2 * t1.val + 1) (2 * k.val) 0 _ hRA ⟨2, by decide⟩ ⟨1, by decide⟩ _ rfl _ hw_v1739 _ (k1_off68_form ..) _ _
    have a_v1791 : pair1_last.sl.v1791 d L tab k r g1 g2 hR hin = AccMath.accVec (rowF fl tab (wL L).val (2 * t1.val + 1) (2 * k.val)) (offF fl (wL L).val (2 * t1.val + 1) (2 * k.val)) 1 4 := by
      rw [show pair1_last.sl.v1791 d L tab k r g1 g2 hR hin = addf (pair1_last.sl.v1755 d L tab k r g1 g2 hR hin) (pair1_last.sl.v1790 d L tab k r g1 g2 hR hin) from rfl, a_v1755]
      exact acc_step d L fl tab (wL L).val (2 * t1.val + 1) (2 * k.val) 0 _ hRA ⟨3, by decide⟩ ⟨1, by decide⟩ _ rfl _ hw_v1775 _ (k1_off69_form ..) _ _
    have a_v1827 : pair1_last.sl.v1827 d L tab k r g1 g2 hR hin = AccMath.accVec (rowF fl tab (wL L).val (2 * t1.val + 1) (2 * k.val)) (offF fl (wL L).val (2 * t1.val + 1) (2 * k.val)) 1 5 := by
      rw [show pair1_last.sl.v1827 d L tab k r g1 g2 hR hin = addf (pair1_last.sl.v1791 d L tab k r g1 g2 hR hin) (pair1_last.sl.v1826 d L tab k r g1 g2 hR hin) from rfl, a_v1791]
      exact acc_step d L fl tab (wL L).val (2 * t1.val + 1) (2 * k.val) 0 _ hRA ⟨4, by decide⟩ ⟨1, by decide⟩ _ rfl _ hw_v1811 _ (k1_off70_form ..) _ _
    have a_v1863 : pair1_last.sl.v1863 d L tab k r g1 g2 hR hin = AccMath.accVec (rowF fl tab (wL L).val (2 * t1.val + 1) (2 * k.val)) (offF fl (wL L).val (2 * t1.val + 1) (2 * k.val)) 1 6 := by
      rw [show pair1_last.sl.v1863 d L tab k r g1 g2 hR hin = addf (pair1_last.sl.v1827 d L tab k r g1 g2 hR hin) (pair1_last.sl.v1862 d L tab k r g1 g2 hR hin) from rfl, a_v1827]
      exact acc_step d L fl tab (wL L).val (2 * t1.val + 1) (2 * k.val) 0 _ hRA ⟨5, by decide⟩ ⟨1, by decide⟩ _ rfl _ hw_v1847 _ (k1_off71_form ..) _ _
    have a_v1899 : pair1_last.sl.v1899 d L tab k r g1 g2 hR hin = AccMath.accVec (rowF fl tab (wL L).val (2 * t1.val + 1) (2 * k.val)) (offF fl (wL L).val (2 * t1.val + 1) (2 * k.val)) 1 7 := by
      rw [show pair1_last.sl.v1899 d L tab k r g1 g2 hR hin = addf (pair1_last.sl.v1863 d L tab k r g1 g2 hR hin) (pair1_last.sl.v1898 d L tab k r g1 g2 hR hin) from rfl, a_v1863]
      exact acc_step d L fl tab (wL L).val (2 * t1.val + 1) (2 * k.val) 0 _ hRA ⟨6, by decide⟩ ⟨1, by decide⟩ _ rfl _ hw_v1883 _ (k1_off72_form ..) _ _
    have a_v1935 : pair1_last.sl.v1935 d L tab k r g1 g2 hR hin = AccMath.accVec (rowF fl tab (wL L).val (2 * t1.val + 1) (2 * k.val)) (offF fl (wL L).val (2 * t1.val + 1) (2 * k.val)) 1 8 := by
      rw [show pair1_last.sl.v1935 d L tab k r g1 g2 hR hin = addf (pair1_last.sl.v1899 d L tab k r g1 g2 hR hin) (pair1_last.sl.v1934 d L tab k r g1 g2 hR hin) from rfl, a_v1899]
      exact acc_step d L fl tab (wL L).val (2 * t1.val + 1) (2 * k.val) 0 _ hRA ⟨7, by decide⟩ ⟨1, by decide⟩ _ rfl _ hw_v1919 _ (k1_off73_form ..) _ _
    have a_v1971 : pair1_last.sl.v1971 d L tab k r g1 g2 hR hin = AccMath.accVec (rowF fl tab (wL L).val (2 * t1.val + 1) (2 * k.val)) (offF fl (wL L).val (2 * t1.val + 1) (2 * k.val)) 1 9 := by
      rw [show pair1_last.sl.v1971 d L tab k r g1 g2 hR hin = addf (pair1_last.sl.v1935 d L tab k r g1 g2 hR hin) (pair1_last.sl.v1970 d L tab k r g1 g2 hR hin) from rfl, a_v1935]
      exact acc_step d L fl tab (wL L).val (2 * t1.val + 1) (2 * k.val) 0 _ hRA ⟨8, by decide⟩ ⟨1, by decide⟩ _ rfl _ hw_v1955 _ (k1_off74_form ..) _ _
    have a_v2007 : pair1_last.sl.v2007 d L tab k r g1 g2 hR hin = AccMath.accVec (rowF fl tab (wL L).val (2 * t1.val + 1) (2 * k.val)) (offF fl (wL L).val (2 * t1.val + 1) (2 * k.val)) 1 10 := by
      rw [show pair1_last.sl.v2007 d L tab k r g1 g2 hR hin = addf (pair1_last.sl.v1971 d L tab k r g1 g2 hR hin) (pair1_last.sl.v2006 d L tab k r g1 g2 hR hin) from rfl, a_v1971]
      exact acc_step d L fl tab (wL L).val (2 * t1.val + 1) (2 * k.val) 0 _ hRA ⟨9, by decide⟩ ⟨1, by decide⟩ _ rfl _ hw_v1991 _ (k1_off75_form ..) _ _
    have a_v2043 : pair1_last.sl.v2043 d L tab k r g1 g2 hR hin = AccMath.accVec (rowF fl tab (wL L).val (2 * t1.val + 1) (2 * k.val)) (offF fl (wL L).val (2 * t1.val + 1) (2 * k.val)) 1 11 := by
      rw [show pair1_last.sl.v2043 d L tab k r g1 g2 hR hin = addf (pair1_last.sl.v2007 d L tab k r g1 g2 hR hin) (pair1_last.sl.v2042 d L tab k r g1 g2 hR hin) from rfl, a_v2007]
      exact acc_step d L fl tab (wL L).val (2 * t1.val + 1) (2 * k.val) 0 _ hRA ⟨10, by decide⟩ ⟨1, by decide⟩ _ rfl _ hw_v2027 _ (k1_off76_form ..) _ _
    have a_v2079 : pair1_last.sl.v2079 d L tab k r g1 g2 hR hin = AccMath.accVec (rowF fl tab (wL L).val (2 * t1.val + 1) (2 * k.val)) (offF fl (wL L).val (2 * t1.val + 1) (2 * k.val)) 1 12 := by
      rw [show pair1_last.sl.v2079 d L tab k r g1 g2 hR hin = addf (pair1_last.sl.v2043 d L tab k r g1 g2 hR hin) (pair1_last.sl.v2078 d L tab k r g1 g2 hR hin) from rfl, a_v2043]
      exact acc_step d L fl tab (wL L).val (2 * t1.val + 1) (2 * k.val) 0 _ hRA ⟨11, by decide⟩ ⟨1, by decide⟩ _ rfl _ hw_v2063 _ (k1_off77_form ..) _ _
    have a_v2115 : pair1_last.sl.v2115 d L tab k r g1 g2 hR hin = AccMath.accVec (rowF fl tab (wL L).val (2 * t1.val + 1) (2 * k.val)) (offF fl (wL L).val (2 * t1.val + 1) (2 * k.val)) 1 13 := by
      rw [show pair1_last.sl.v2115 d L tab k r g1 g2 hR hin = addf (pair1_last.sl.v2079 d L tab k r g1 g2 hR hin) (pair1_last.sl.v2114 d L tab k r g1 g2 hR hin) from rfl, a_v2079]
      exact acc_step d L fl tab (wL L).val (2 * t1.val + 1) (2 * k.val) 0 _ hRA ⟨12, by decide⟩ ⟨1, by decide⟩ _ rfl _ hw_v2099 _ (k1_off78_form ..) _ _
    have a_v2151 : pair1_last.sl.v2151 d L tab k r g1 g2 hR hin = AccMath.accVec (rowF fl tab (wL L).val (2 * t1.val + 1) (2 * k.val)) (offF fl (wL L).val (2 * t1.val + 1) (2 * k.val)) 1 14 := by
      rw [show pair1_last.sl.v2151 d L tab k r g1 g2 hR hin = addf (pair1_last.sl.v2115 d L tab k r g1 g2 hR hin) (pair1_last.sl.v2150 d L tab k r g1 g2 hR hin) from rfl, a_v2115]
      exact acc_step d L fl tab (wL L).val (2 * t1.val + 1) (2 * k.val) 0 _ hRA ⟨13, by decide⟩ ⟨1, by decide⟩ _ rfl _ hw_v2135 _ (k1_off79_form ..) _ _
    have a_v2187 : pair1_last.sl.v2187 d L tab k r g1 g2 hR hin = AccMath.accVec (rowF fl tab (wL L).val (2 * t1.val + 1) (2 * k.val)) (offF fl (wL L).val (2 * t1.val + 1) (2 * k.val)) 1 15 := by
      rw [show pair1_last.sl.v2187 d L tab k r g1 g2 hR hin = addf (pair1_last.sl.v2151 d L tab k r g1 g2 hR hin) (pair1_last.sl.v2186 d L tab k r g1 g2 hR hin) from rfl, a_v2151]
      exact acc_step d L fl tab (wL L).val (2 * t1.val + 1) (2 * k.val) 0 _ hRA ⟨14, by decide⟩ ⟨1, by decide⟩ _ rfl _ hw_v2171 _ (k1_off80_form ..) _ _
    have a_v2223 : pair1_last.sl.v2223 d L tab k r g1 g2 hR hin = AccMath.accVec (rowF fl tab (wL L).val (2 * t1.val + 1) (2 * k.val)) (offF fl (wL L).val (2 * t1.val + 1) (2 * k.val)) 1 16 := by
      rw [show pair1_last.sl.v2223 d L tab k r g1 g2 hR hin = addf (pair1_last.sl.v2187 d L tab k r g1 g2 hR hin) (pair1_last.sl.v2222 d L tab k r g1 g2 hR hin) from rfl, a_v2187]
      exact acc_step d L fl tab (wL L).val (2 * t1.val + 1) (2 * k.val) 0 _ hRA ⟨15, by decide⟩ ⟨1, by decide⟩ _ rfl _ hw_v2207 _ (k1_off81_form ..) _ _
    have a_v1683_1 : pair1_last.sl.v1683_1 d L tab k r g1 g2 hR hin = AccMath.accVec (rowF fl tab (wL L).val (2 * t1.val + 1) (2 * k.val)) (offF fl (wL L).val (2 * t1.val + 1) (2 * k.val)) 1 17 := by
      rw [show pair1_last.sl.v1683_1 d L tab k r g1 g2 hR hin = addf (pair1_last.sl.v2223 d L tab k r g1 g2 hR hin) (pair1_last.sl.v1682_1 d L tab k r g1 g2 hR hin) from rfl, a_v2223]
      exact acc_step d L fl tab (wL L).val (2 * t1.val + 1) (2 * k.val) 0 _ hRA ⟨16, by decide⟩ ⟨1, by decide⟩ _ rfl _ hw_v1667_1 _ (k1_off66_form ..) _ _
    have a_v1719_1 : pair1_last.sl.v1719_1 d L tab k r g1 g2 hR hin = AccMath.accVec (rowF fl tab (wL L).val (2 * t1.val + 1) (2 * k.val)) (offF fl (wL L).val (2 * t1.val + 1) (2 * k.val)) 1 18 := by
      rw [show pair1_last.sl.v1719_1 d L tab k r g1 g2 hR hin = addf (pair1_last.sl.v1683_1 d L tab k r g1 g2 hR hin) (pair1_last.sl.v1718_1 d L tab k r g1 g2 hR hin) from rfl, a_v1683_1]
      exact acc_step d L fl tab (wL L).val (2 * t1.val + 1) (2 * k.val) 0 _ hRA ⟨17, by decide⟩ ⟨1, by decide⟩ _ rfl _ hw_v1703_1 _ (k1_off67_form ..) _ _
    have a_v1755_1 : pair1_last.sl.v1755_1 d L tab k r g1 g2 hR hin = AccMath.accVec (rowF fl tab (wL L).val (2 * t1.val + 1) (2 * k.val)) (offF fl (wL L).val (2 * t1.val + 1) (2 * k.val)) 1 19 := by
      rw [show pair1_last.sl.v1755_1 d L tab k r g1 g2 hR hin = addf (pair1_last.sl.v1719_1 d L tab k r g1 g2 hR hin) (pair1_last.sl.v1754_1 d L tab k r g1 g2 hR hin) from rfl, a_v1719_1]
      exact acc_step d L fl tab (wL L).val (2 * t1.val + 1) (2 * k.val) 0 _ hRA ⟨18, by decide⟩ ⟨1, by decide⟩ _ rfl _ hw_v1739_1 _ (k1_off68_form ..) _ _
    have a_v1791_1 : pair1_last.sl.v1791_1 d L tab k r g1 g2 hR hin = AccMath.accVec (rowF fl tab (wL L).val (2 * t1.val + 1) (2 * k.val)) (offF fl (wL L).val (2 * t1.val + 1) (2 * k.val)) 1 20 := by
      rw [show pair1_last.sl.v1791_1 d L tab k r g1 g2 hR hin = addf (pair1_last.sl.v1755_1 d L tab k r g1 g2 hR hin) (pair1_last.sl.v1790_1 d L tab k r g1 g2 hR hin) from rfl, a_v1755_1]
      exact acc_step d L fl tab (wL L).val (2 * t1.val + 1) (2 * k.val) 0 _ hRA ⟨19, by decide⟩ ⟨1, by decide⟩ _ rfl _ hw_v1775_1 _ (k1_off69_form ..) _ _
    have a_v1827_1 : pair1_last.sl.v1827_1 d L tab k r g1 g2 hR hin = AccMath.accVec (rowF fl tab (wL L).val (2 * t1.val + 1) (2 * k.val)) (offF fl (wL L).val (2 * t1.val + 1) (2 * k.val)) 1 21 := by
      rw [show pair1_last.sl.v1827_1 d L tab k r g1 g2 hR hin = addf (pair1_last.sl.v1791_1 d L tab k r g1 g2 hR hin) (pair1_last.sl.v1826_1 d L tab k r g1 g2 hR hin) from rfl, a_v1791_1]
      exact acc_step d L fl tab (wL L).val (2 * t1.val + 1) (2 * k.val) 0 _ hRA ⟨20, by decide⟩ ⟨1, by decide⟩ _ rfl _ hw_v1811_1 _ (k1_off70_form ..) _ _
    have a_v1863_1 : pair1_last.sl.v1863_1 d L tab k r g1 g2 hR hin = AccMath.accVec (rowF fl tab (wL L).val (2 * t1.val + 1) (2 * k.val)) (offF fl (wL L).val (2 * t1.val + 1) (2 * k.val)) 1 22 := by
      rw [show pair1_last.sl.v1863_1 d L tab k r g1 g2 hR hin = addf (pair1_last.sl.v1827_1 d L tab k r g1 g2 hR hin) (pair1_last.sl.v1862_1 d L tab k r g1 g2 hR hin) from rfl, a_v1827_1]
      exact acc_step d L fl tab (wL L).val (2 * t1.val + 1) (2 * k.val) 0 _ hRA ⟨21, by decide⟩ ⟨1, by decide⟩ _ rfl _ hw_v1847_1 _ (k1_off71_form ..) _ _
    have a_v1899_1 : pair1_last.sl.v1899_1 d L tab k r g1 g2 hR hin = AccMath.accVec (rowF fl tab (wL L).val (2 * t1.val + 1) (2 * k.val)) (offF fl (wL L).val (2 * t1.val + 1) (2 * k.val)) 1 23 := by
      rw [show pair1_last.sl.v1899_1 d L tab k r g1 g2 hR hin = addf (pair1_last.sl.v1863_1 d L tab k r g1 g2 hR hin) (pair1_last.sl.v1898_1 d L tab k r g1 g2 hR hin) from rfl, a_v1863_1]
      exact acc_step d L fl tab (wL L).val (2 * t1.val + 1) (2 * k.val) 0 _ hRA ⟨22, by decide⟩ ⟨1, by decide⟩ _ rfl _ hw_v1883_1 _ (k1_off72_form ..) _ _
    have a_v1935_1 : pair1_last.sl.v1935_1 d L tab k r g1 g2 hR hin = AccMath.accVec (rowF fl tab (wL L).val (2 * t1.val + 1) (2 * k.val)) (offF fl (wL L).val (2 * t1.val + 1) (2 * k.val)) 1 24 := by
      rw [show pair1_last.sl.v1935_1 d L tab k r g1 g2 hR hin = addf (pair1_last.sl.v1899_1 d L tab k r g1 g2 hR hin) (pair1_last.sl.v1934_1 d L tab k r g1 g2 hR hin) from rfl, a_v1899_1]
      exact acc_step d L fl tab (wL L).val (2 * t1.val + 1) (2 * k.val) 0 _ hRA ⟨23, by decide⟩ ⟨1, by decide⟩ _ rfl _ hw_v1919_1 _ (k1_off73_form ..) _ _
    have a_v1971_1 : pair1_last.sl.v1971_1 d L tab k r g1 g2 hR hin = AccMath.accVec (rowF fl tab (wL L).val (2 * t1.val + 1) (2 * k.val)) (offF fl (wL L).val (2 * t1.val + 1) (2 * k.val)) 1 25 := by
      rw [show pair1_last.sl.v1971_1 d L tab k r g1 g2 hR hin = addf (pair1_last.sl.v1935_1 d L tab k r g1 g2 hR hin) (pair1_last.sl.v1970_1 d L tab k r g1 g2 hR hin) from rfl, a_v1935_1]
      exact acc_step d L fl tab (wL L).val (2 * t1.val + 1) (2 * k.val) 0 _ hRA ⟨24, by decide⟩ ⟨1, by decide⟩ _ rfl _ hw_v1955_1 _ (k1_off74_form ..) _ _
    have a_v2007_1 : pair1_last.sl.v2007_1 d L tab k r g1 g2 hR hin = AccMath.accVec (rowF fl tab (wL L).val (2 * t1.val + 1) (2 * k.val)) (offF fl (wL L).val (2 * t1.val + 1) (2 * k.val)) 1 26 := by
      rw [show pair1_last.sl.v2007_1 d L tab k r g1 g2 hR hin = addf (pair1_last.sl.v1971_1 d L tab k r g1 g2 hR hin) (pair1_last.sl.v2006_1 d L tab k r g1 g2 hR hin) from rfl, a_v1971_1]
      exact acc_step d L fl tab (wL L).val (2 * t1.val + 1) (2 * k.val) 0 _ hRA ⟨25, by decide⟩ ⟨1, by decide⟩ _ rfl _ hw_v1991_1 _ (k1_off75_form ..) _ _
    have a_v2043_1 : pair1_last.sl.v2043_1 d L tab k r g1 g2 hR hin = AccMath.accVec (rowF fl tab (wL L).val (2 * t1.val + 1) (2 * k.val)) (offF fl (wL L).val (2 * t1.val + 1) (2 * k.val)) 1 27 := by
      rw [show pair1_last.sl.v2043_1 d L tab k r g1 g2 hR hin = addf (pair1_last.sl.v2007_1 d L tab k r g1 g2 hR hin) (pair1_last.sl.v2042_1 d L tab k r g1 g2 hR hin) from rfl, a_v2007_1]
      exact acc_step d L fl tab (wL L).val (2 * t1.val + 1) (2 * k.val) 0 _ hRA ⟨26, by decide⟩ ⟨1, by decide⟩ _ rfl _ hw_v2027_1 _ (k1_off76_form ..) _ _
    have a_v2079_1 : pair1_last.sl.v2079_1 d L tab k r g1 g2 hR hin = AccMath.accVec (rowF fl tab (wL L).val (2 * t1.val + 1) (2 * k.val)) (offF fl (wL L).val (2 * t1.val + 1) (2 * k.val)) 1 28 := by
      rw [show pair1_last.sl.v2079_1 d L tab k r g1 g2 hR hin = addf (pair1_last.sl.v2043_1 d L tab k r g1 g2 hR hin) (pair1_last.sl.v2078_1 d L tab k r g1 g2 hR hin) from rfl, a_v2043_1]
      exact acc_step d L fl tab (wL L).val (2 * t1.val + 1) (2 * k.val) 0 _ hRA ⟨27, by decide⟩ ⟨1, by decide⟩ _ rfl _ hw_v2063_1 _ (k1_off77_form ..) _ _
    have a_v2115_1 : pair1_last.sl.v2115_1 d L tab k r g1 g2 hR hin = AccMath.accVec (rowF fl tab (wL L).val (2 * t1.val + 1) (2 * k.val)) (offF fl (wL L).val (2 * t1.val + 1) (2 * k.val)) 1 29 := by
      rw [show pair1_last.sl.v2115_1 d L tab k r g1 g2 hR hin = addf (pair1_last.sl.v2079_1 d L tab k r g1 g2 hR hin) (pair1_last.sl.v2114_1 d L tab k r g1 g2 hR hin) from rfl, a_v2079_1]
      exact acc_step d L fl tab (wL L).val (2 * t1.val + 1) (2 * k.val) 0 _ hRA ⟨28, by decide⟩ ⟨1, by decide⟩ _ rfl _ hw_v2099_1 _ (k1_off78_form ..) _ _
    have a_v2151_1 : pair1_last.sl.v2151_1 d L tab k r g1 g2 hR hin = AccMath.accVec (rowF fl tab (wL L).val (2 * t1.val + 1) (2 * k.val)) (offF fl (wL L).val (2 * t1.val + 1) (2 * k.val)) 1 30 := by
      rw [show pair1_last.sl.v2151_1 d L tab k r g1 g2 hR hin = addf (pair1_last.sl.v2115_1 d L tab k r g1 g2 hR hin) (pair1_last.sl.v2150_1 d L tab k r g1 g2 hR hin) from rfl, a_v2115_1]
      exact acc_step d L fl tab (wL L).val (2 * t1.val + 1) (2 * k.val) 0 _ hRA ⟨29, by decide⟩ ⟨1, by decide⟩ _ rfl _ hw_v2135_1 _ (k1_off79_form ..) _ _
    have a_v2187_1 : pair1_last.sl.v2187_1 d L tab k r g1 g2 hR hin = AccMath.accVec (rowF fl tab (wL L).val (2 * t1.val + 1) (2 * k.val)) (offF fl (wL L).val (2 * t1.val + 1) (2 * k.val)) 1 31 := by
      rw [show pair1_last.sl.v2187_1 d L tab k r g1 g2 hR hin = addf (pair1_last.sl.v2151_1 d L tab k r g1 g2 hR hin) (pair1_last.sl.v2186_1 d L tab k r g1 g2 hR hin) from rfl, a_v2151_1]
      exact acc_step d L fl tab (wL L).val (2 * t1.val + 1) (2 * k.val) 0 _ hRA ⟨30, by decide⟩ ⟨1, by decide⟩ _ rfl _ hw_v2171_1 _ (k1_off80_form ..) _ _
    have a_v2223_1 : pair1_last.sl.v2223_1 d L tab k r g1 g2 hR hin = AccMath.accVec (rowF fl tab (wL L).val (2 * t1.val + 1) (2 * k.val)) (offF fl (wL L).val (2 * t1.val + 1) (2 * k.val)) 1 32 := by
      rw [show pair1_last.sl.v2223_1 d L tab k r g1 g2 hR hin = addf (pair1_last.sl.v2187_1 d L tab k r g1 g2 hR hin) (pair1_last.sl.v2222_1 d L tab k r g1 g2 hR hin) from rfl, a_v2187_1]
      exact acc_step d L fl tab (wL L).val (2 * t1.val + 1) (2 * k.val) 0 _ hRA ⟨31, by decide⟩ ⟨1, by decide⟩ _ rfl _ hw_v2207_1 _ (k1_off81_form ..) _ _
    have a_v1683_2 : pair1_last.sl.v1683_2 d L tab k r g1 g2 hR hin = AccMath.accVec (rowF fl tab (wL L).val (2 * t1.val + 1) (2 * k.val)) (offF fl (wL L).val (2 * t1.val + 1) (2 * k.val)) 1 33 := by
      rw [show pair1_last.sl.v1683_2 d L tab k r g1 g2 hR hin = addf (pair1_last.sl.v2223_1 d L tab k r g1 g2 hR hin) (pair1_last.sl.v1682_2 d L tab k r g1 g2 hR hin) from rfl, a_v2223_1]
      exact acc_step d L fl tab (wL L).val (2 * t1.val + 1) (2 * k.val) 0 _ hRA ⟨32, by decide⟩ ⟨1, by decide⟩ _ rfl _ hw_v1667_2 _ (k1_off66_form ..) _ _
    have a_v1719_2 : pair1_last.sl.v1719_2 d L tab k r g1 g2 hR hin = AccMath.accVec (rowF fl tab (wL L).val (2 * t1.val + 1) (2 * k.val)) (offF fl (wL L).val (2 * t1.val + 1) (2 * k.val)) 1 34 := by
      rw [show pair1_last.sl.v1719_2 d L tab k r g1 g2 hR hin = addf (pair1_last.sl.v1683_2 d L tab k r g1 g2 hR hin) (pair1_last.sl.v1718_2 d L tab k r g1 g2 hR hin) from rfl, a_v1683_2]
      exact acc_step d L fl tab (wL L).val (2 * t1.val + 1) (2 * k.val) 0 _ hRA ⟨33, by decide⟩ ⟨1, by decide⟩ _ rfl _ hw_v1703_2 _ (k1_off67_form ..) _ _
    have a_v1755_2 : pair1_last.sl.v1755_2 d L tab k r g1 g2 hR hin = AccMath.accVec (rowF fl tab (wL L).val (2 * t1.val + 1) (2 * k.val)) (offF fl (wL L).val (2 * t1.val + 1) (2 * k.val)) 1 35 := by
      rw [show pair1_last.sl.v1755_2 d L tab k r g1 g2 hR hin = addf (pair1_last.sl.v1719_2 d L tab k r g1 g2 hR hin) (pair1_last.sl.v1754_2 d L tab k r g1 g2 hR hin) from rfl, a_v1719_2]
      exact acc_step d L fl tab (wL L).val (2 * t1.val + 1) (2 * k.val) 0 _ hRA ⟨34, by decide⟩ ⟨1, by decide⟩ _ rfl _ hw_v1739_2 _ (k1_off68_form ..) _ _
    have a_v1791_2 : pair1_last.sl.v1791_2 d L tab k r g1 g2 hR hin = AccMath.accVec (rowF fl tab (wL L).val (2 * t1.val + 1) (2 * k.val)) (offF fl (wL L).val (2 * t1.val + 1) (2 * k.val)) 1 36 := by
      rw [show pair1_last.sl.v1791_2 d L tab k r g1 g2 hR hin = addf (pair1_last.sl.v1755_2 d L tab k r g1 g2 hR hin) (pair1_last.sl.v1790_2 d L tab k r g1 g2 hR hin) from rfl, a_v1755_2]
      exact acc_step d L fl tab (wL L).val (2 * t1.val + 1) (2 * k.val) 0 _ hRA ⟨35, by decide⟩ ⟨1, by decide⟩ _ rfl _ hw_v1775_2 _ (k1_off69_form ..) _ _
    have a_v1827_2 : pair1_last.sl.v1827_2 d L tab k r g1 g2 hR hin = AccMath.accVec (rowF fl tab (wL L).val (2 * t1.val + 1) (2 * k.val)) (offF fl (wL L).val (2 * t1.val + 1) (2 * k.val)) 1 37 := by
      rw [show pair1_last.sl.v1827_2 d L tab k r g1 g2 hR hin = addf (pair1_last.sl.v1791_2 d L tab k r g1 g2 hR hin) (pair1_last.sl.v1826_2 d L tab k r g1 g2 hR hin) from rfl, a_v1791_2]
      exact acc_step d L fl tab (wL L).val (2 * t1.val + 1) (2 * k.val) 0 _ hRA ⟨36, by decide⟩ ⟨1, by decide⟩ _ rfl _ hw_v1811_2 _ (k1_off70_form ..) _ _
    have a_v1863_2 : pair1_last.sl.v1863_2 d L tab k r g1 g2 hR hin = AccMath.accVec (rowF fl tab (wL L).val (2 * t1.val + 1) (2 * k.val)) (offF fl (wL L).val (2 * t1.val + 1) (2 * k.val)) 1 38 := by
      rw [show pair1_last.sl.v1863_2 d L tab k r g1 g2 hR hin = addf (pair1_last.sl.v1827_2 d L tab k r g1 g2 hR hin) (pair1_last.sl.v1862_2 d L tab k r g1 g2 hR hin) from rfl, a_v1827_2]
      exact acc_step d L fl tab (wL L).val (2 * t1.val + 1) (2 * k.val) 0 _ hRA ⟨37, by decide⟩ ⟨1, by decide⟩ _ rfl _ hw_v1847_2 _ (k1_off71_form ..) _ _
    have a_v1899_2 : pair1_last.sl.v1899_2 d L tab k r g1 g2 hR hin = AccMath.accVec (rowF fl tab (wL L).val (2 * t1.val + 1) (2 * k.val)) (offF fl (wL L).val (2 * t1.val + 1) (2 * k.val)) 1 39 := by
      rw [show pair1_last.sl.v1899_2 d L tab k r g1 g2 hR hin = addf (pair1_last.sl.v1863_2 d L tab k r g1 g2 hR hin) (pair1_last.sl.v1898_2 d L tab k r g1 g2 hR hin) from rfl, a_v1863_2]
      exact acc_step d L fl tab (wL L).val (2 * t1.val + 1) (2 * k.val) 0 _ hRA ⟨38, by decide⟩ ⟨1, by decide⟩ _ rfl _ hw_v1883_2 _ (k1_off72_form ..) _ _
    have a_v1935_2 : pair1_last.sl.v1935_2 d L tab k r g1 g2 hR hin = AccMath.accVec (rowF fl tab (wL L).val (2 * t1.val + 1) (2 * k.val)) (offF fl (wL L).val (2 * t1.val + 1) (2 * k.val)) 1 40 := by
      rw [show pair1_last.sl.v1935_2 d L tab k r g1 g2 hR hin = addf (pair1_last.sl.v1899_2 d L tab k r g1 g2 hR hin) (pair1_last.sl.v1934_2 d L tab k r g1 g2 hR hin) from rfl, a_v1899_2]
      exact acc_step d L fl tab (wL L).val (2 * t1.val + 1) (2 * k.val) 0 _ hRA ⟨39, by decide⟩ ⟨1, by decide⟩ _ rfl _ hw_v1919_2 _ (k1_off73_form ..) _ _
    have a_v1971_2 : pair1_last.sl.v1971_2 d L tab k r g1 g2 hR hin = AccMath.accVec (rowF fl tab (wL L).val (2 * t1.val + 1) (2 * k.val)) (offF fl (wL L).val (2 * t1.val + 1) (2 * k.val)) 1 41 := by
      rw [show pair1_last.sl.v1971_2 d L tab k r g1 g2 hR hin = addf (pair1_last.sl.v1935_2 d L tab k r g1 g2 hR hin) (pair1_last.sl.v1970_2 d L tab k r g1 g2 hR hin) from rfl, a_v1935_2]
      exact acc_step d L fl tab (wL L).val (2 * t1.val + 1) (2 * k.val) 0 _ hRA ⟨40, by decide⟩ ⟨1, by decide⟩ _ rfl _ hw_v1955_2 _ (k1_off74_form ..) _ _
    have a_v2007_2 : pair1_last.sl.v2007_2 d L tab k r g1 g2 hR hin = AccMath.accVec (rowF fl tab (wL L).val (2 * t1.val + 1) (2 * k.val)) (offF fl (wL L).val (2 * t1.val + 1) (2 * k.val)) 1 42 := by
      rw [show pair1_last.sl.v2007_2 d L tab k r g1 g2 hR hin = addf (pair1_last.sl.v1971_2 d L tab k r g1 g2 hR hin) (pair1_last.sl.v2006_2 d L tab k r g1 g2 hR hin) from rfl, a_v1971_2]
      exact acc_step d L fl tab (wL L).val (2 * t1.val + 1) (2 * k.val) 0 _ hRA ⟨41, by decide⟩ ⟨1, by decide⟩ _ rfl _ hw_v1991_2 _ (k1_off75_form ..) _ _
    have a_v2043_2 : pair1_last.sl.v2043_2 d L tab k r g1 g2 hR hin = AccMath.accVec (rowF fl tab (wL L).val (2 * t1.val + 1) (2 * k.val)) (offF fl (wL L).val (2 * t1.val + 1) (2 * k.val)) 1 43 := by
      rw [show pair1_last.sl.v2043_2 d L tab k r g1 g2 hR hin = addf (pair1_last.sl.v2007_2 d L tab k r g1 g2 hR hin) (pair1_last.sl.v2042_2 d L tab k r g1 g2 hR hin) from rfl, a_v2007_2]
      exact acc_step d L fl tab (wL L).val (2 * t1.val + 1) (2 * k.val) 0 _ hRA ⟨42, by decide⟩ ⟨1, by decide⟩ _ rfl _ hw_v2027_2 _ (k1_off76_form ..) _ _
    have a_v2079_2 : pair1_last.sl.v2079_2 d L tab k r g1 g2 hR hin = AccMath.accVec (rowF fl tab (wL L).val (2 * t1.val + 1) (2 * k.val)) (offF fl (wL L).val (2 * t1.val + 1) (2 * k.val)) 1 44 := by
      rw [show pair1_last.sl.v2079_2 d L tab k r g1 g2 hR hin = addf (pair1_last.sl.v2043_2 d L tab k r g1 g2 hR hin) (pair1_last.sl.v2078_2 d L tab k r g1 g2 hR hin) from rfl, a_v2043_2]
      exact acc_step d L fl tab (wL L).val (2 * t1.val + 1) (2 * k.val) 0 _ hRA ⟨43, by decide⟩ ⟨1, by decide⟩ _ rfl _ hw_v2063_2 _ (k1_off77_form ..) _ _
    have a_v2115_2 : pair1_last.sl.v2115_2 d L tab k r g1 g2 hR hin = AccMath.accVec (rowF fl tab (wL L).val (2 * t1.val + 1) (2 * k.val)) (offF fl (wL L).val (2 * t1.val + 1) (2 * k.val)) 1 45 := by
      rw [show pair1_last.sl.v2115_2 d L tab k r g1 g2 hR hin = addf (pair1_last.sl.v2079_2 d L tab k r g1 g2 hR hin) (pair1_last.sl.v2114_2 d L tab k r g1 g2 hR hin) from rfl, a_v2079_2]
      exact acc_step d L fl tab (wL L).val (2 * t1.val + 1) (2 * k.val) 0 _ hRA ⟨44, by decide⟩ ⟨1, by decide⟩ _ rfl _ hw_v2099_2 _ (k1_off78_form ..) _ _
    have a_v2151_2 : pair1_last.sl.v2151_2 d L tab k r g1 g2 hR hin = AccMath.accVec (rowF fl tab (wL L).val (2 * t1.val + 1) (2 * k.val)) (offF fl (wL L).val (2 * t1.val + 1) (2 * k.val)) 1 46 := by
      rw [show pair1_last.sl.v2151_2 d L tab k r g1 g2 hR hin = addf (pair1_last.sl.v2115_2 d L tab k r g1 g2 hR hin) (pair1_last.sl.v2150_2 d L tab k r g1 g2 hR hin) from rfl, a_v2115_2]
      exact acc_step d L fl tab (wL L).val (2 * t1.val + 1) (2 * k.val) 0 _ hRA ⟨45, by decide⟩ ⟨1, by decide⟩ _ rfl _ hw_v2135_2 _ (k1_off79_form ..) _ _
    have a_v2187_2 : pair1_last.sl.v2187_2 d L tab k r g1 g2 hR hin = AccMath.accVec (rowF fl tab (wL L).val (2 * t1.val + 1) (2 * k.val)) (offF fl (wL L).val (2 * t1.val + 1) (2 * k.val)) 1 47 := by
      rw [show pair1_last.sl.v2187_2 d L tab k r g1 g2 hR hin = addf (pair1_last.sl.v2151_2 d L tab k r g1 g2 hR hin) (pair1_last.sl.v2186_2 d L tab k r g1 g2 hR hin) from rfl, a_v2151_2]
      exact acc_step d L fl tab (wL L).val (2 * t1.val + 1) (2 * k.val) 0 _ hRA ⟨46, by decide⟩ ⟨1, by decide⟩ _ rfl _ hw_v2171_2 _ (k1_off80_form ..) _ _
    have a_v2223_2 : pair1_last.sl.v2223_2 d L tab k r g1 g2 hR hin = AccMath.accVec (rowF fl tab (wL L).val (2 * t1.val + 1) (2 * k.val)) (offF fl (wL L).val (2 * t1.val + 1) (2 * k.val)) 1 48 := by
      rw [show pair1_last.sl.v2223_2 d L tab k r g1 g2 hR hin = addf (pair1_last.sl.v2187_2 d L tab k r g1 g2 hR hin) (pair1_last.sl.v2222_2 d L tab k r g1 g2 hR hin) from rfl, a_v2187_2]
      exact acc_step d L fl tab (wL L).val (2 * t1.val + 1) (2 * k.val) 0 _ hRA ⟨47, by decide⟩ ⟨1, by decide⟩ _ rfl _ hw_v2207_2 _ (k1_off81_form ..) _ _
    have a_v1472 : pair1_last.sl.v1472 d L tab k r g1 g2 hR hin = AccMath.accVec (rowF fl tab (wL L).val (2 * t1.val + 1) (2 * k.val)) (offF fl (wL L).val (2 * t1.val + 1) (2 * k.val)) 1 49 := by
      rw [show pair1_last.sl.v1472 d L tab k r g1 g2 hR hin = addf (pair1_last.sl.v2223_2 d L tab k r g1 g2 hR hin) (pair1_last.sl.v1471 d L tab k r g1 g2 hR hin) from rfl, a_v2223_2]
      exact acc_step d L fl tab (wL L).val (2 * t1.val + 1) (2 * k.val) 0 _ hRA ⟨48, by decide⟩ ⟨1, by decide⟩ _ rfl _ hw_v1456 _ (k1_off83_form ..) _ _
    have a_v1506 : pair1_last.sl.v1506 d L tab k r g1 g2 hR hin = AccMath.accVec (rowF fl tab (wL L).val (2 * t1.val + 1) (2 * k.val)) (offF fl (wL L).val (2 * t1.val + 1) (2 * k.val)) 1 50 := by
      rw [show pair1_last.sl.v1506 d L tab k r g1 g2 hR hin = addf (pair1_last.sl.v1472 d L tab k r g1 g2 hR hin) (pair1_last.sl.v1505 d L tab k r g1 g2 hR hin) from rfl, a_v1472]
      exact acc_step d L fl tab (wL L).val (2 * t1.val + 1) (2 * k.val) 0 _ hRA ⟨49, by decide⟩ ⟨1, by decide⟩ _ rfl _ hw_v1490 _ (k1_off84_form ..) _ _
    have a_v1445_A2 : pair1_last.sl.v1445 = AccMath.accVec (rowF fl tab (wL L).val (2 * t1.val + 1) (2 * k.val)) (offF fl (wL L).val (2 * t1.val + 1) (2 * k.val)) 2 0 := acc_zero fl tab (wL L).val (2 * t1.val + 1) (2 * k.val) 2
    have a_v1691 : pair1_last.sl.v1691 d L tab k r g1 g2 hR hin = AccMath.accVec (rowF fl tab (wL L).val (2 * t1.val + 1) (2 * k.val)) (offF fl (wL L).val (2 * t1.val + 1) (2 * k.val)) 2 1 := by
      rw [show pair1_last.sl.v1691 d L tab k r g1 g2 hR hin = addf (pair1_last.sl.v1445) (pair1_last.sl.v1690 d L tab k r g1 g2 hR hin) from rfl, a_v1445_A2]
      exact acc_step d L fl tab (wL L).val (2 * t1.val + 1) (2 * k.val) 0 _ hRA ⟨0, by decide⟩ ⟨2, by decide⟩ _ rfl _ hw_v1667 _ (k1_off66_form ..) _ _
    have a_v1727 : pair1_last.sl.v1727 d L tab k r g1 g2 hR hin = AccMath.accVec (rowF fl tab (wL L).val (2 * t1.val + 1) (2 * k.val)) (offF fl (wL L).val (2 * t1.val + 1) (2 * k.val)) 2 2 := by
      rw [show pair1_last.sl.v1727 d L tab k r g1 g2 hR hin = addf (pair1_last.sl.v1691 d L tab k r g1 g2 hR hin) (pair1_last.sl.v1726 d L tab k r g1 g2 hR hin) from rfl, a_v1691]
      exact acc_step d L fl tab (wL L).val (2 * t1.val + 1) (2 * k.val) 0 _ hRA ⟨1, by decide⟩ ⟨2, by decide⟩ _ rfl _ hw_v1703 _ (k1_off67_form ..) _ _
    have a_v1763 : pair1_last.sl.v1763 d L tab k r g1 g2 hR hin = AccMath.accVec (rowF fl tab (wL L).val (2 * t1.val + 1) (2 * k.val)) (offF fl (wL L).val (2 * t1.val + 1) (2 * k.val)) 2 3 := by
      rw [show pair1_last.sl.v1763 d L tab k r g1 g2 hR hin = addf (pair1_last.sl.v1727 d L tab k r g1 g2 hR hin) (pair1_last.sl.v1762 d L tab k r g1 g2 hR hin) from rfl, a_v1727]
      exact acc_step d L fl tab (wL L).val (2 * t1.val + 1) (2 * k.val) 0 _ hRA ⟨2, by decide⟩ ⟨2, by decide⟩ _ rfl _ hw_v1739 _ (k1_off68_form ..) _ _
    have a_v1799 : pair1_last.sl.v1799 d L tab k r g1 g2 hR hin = AccMath.accVec (rowF fl tab (wL L).val (2 * t1.val + 1) (2 * k.val)) (offF fl (wL L).val (2 * t1.val + 1) (2 * k.val)) 2 4 := by
      rw [show pair1_last.sl.v1799 d L tab k r g1 g2 hR hin = addf (pair1_last.sl.v1763 d L tab k r g1 g2 hR hin) (pair1_last.sl.v1798 d L tab k r g1 g2 hR hin) from rfl, a_v1763]
      exact acc_step d L fl tab (wL L).val (2 * t1.val + 1) (2 * k.val) 0 _ hRA ⟨3, by decide⟩ ⟨2, by decide⟩ _ rfl _ hw_v1775 _ (k1_off69_form ..) _ _
    have a_v1835 : pair1_last.sl.v1835 d L tab k r g1 g2 hR hin = AccMath.accVec (rowF fl tab (wL L).val (2 * t1.val + 1) (2 * k.val)) (offF fl (wL L).val (2 * t1.val + 1) (2 * k.val)) 2 5 := by
      rw [show pair1_last.sl.v1835 d L tab k r g1 g2 hR hin = addf (pair1_last.sl.v1799 d L tab k r g1 g2 hR hin) (pair1_last.sl.v1834 d L tab k r g1 g2 hR hin) from rfl, a_v1799]
      exact acc_step d L fl tab (wL L).val (2 * t1.val + 1) (2 * k.val) 0 _ hRA ⟨4, by decide⟩ ⟨2, by decide⟩ _ rfl _ hw_v1811 _ (k1_off70_form ..) _ _
    have a_v1871 : pair1_last.sl.v1871 d L tab k r g1 g2 hR hin = AccMath.accVec (rowF fl tab (wL L).val (2 * t1.val + 1) (2 * k.val)) (offF fl (wL L).val (2 * t1.val + 1) (2 * k.val)) 2 6 := by
      rw [show pair1_last.sl.v1871 d L tab k r g1 g2 hR hin = addf (pair1_last.sl.v1835 d L tab k r g1 g2 hR hin) (pair1_last.sl.v1870 d L tab k r g1 g2 hR hin) from rfl, a_v1835]
      exact acc_step d L fl tab (wL L).val (2 * t1.val + 1) (2 * k.val) 0 _ hRA ⟨5, by decide⟩ ⟨2, by decide⟩ _ rfl _ hw_v1847 _ (k1_off71_form ..) _ _
    have a_v1907 : pair1_last.sl.v1907 d L tab k r g1 g2 hR hin = AccMath.accVec (rowF fl tab (wL L).val (2 * t1.val + 1) (2 * k.val)) (offF fl (wL L).val (2 * t1.val + 1) (2 * k.val)) 2 7 := by
      rw [show pair1_last.sl.v1907 d L tab k r g1 g2 hR hin = addf (pair1_last.sl.v1871 d L tab k r g1 g2 hR hin) (pair1_last.sl.v1906 d L tab k r g1 g2 hR hin) from rfl, a_v1871]
      exact acc_step d L fl tab (wL L).val (2 * t1.val + 1) (2 * k.val) 0 _ hRA ⟨6, by decide⟩ ⟨2, by decide⟩ _ rfl _ hw_v1883 _ (k1_off72_form ..) _ _
    have a_v1943 : pair1_last.sl.v1943 d L tab k r g1 g2 hR hin = AccMath.accVec (rowF fl tab (wL L).val (2 * t1.val + 1) (2 * k.val)) (offF fl (wL L).val (2 * t1.val + 1) (2 * k.val)) 2 8 := by
      rw [show pair1_last.sl.v1943 d L tab k r g1 g2 hR hin = addf (pair1_last.sl.v1907 d L tab k r g1 g2 hR hin) (pair1_last.sl.v1942 d L tab k r g1 g2 hR hin) from rfl, a_v1907]
      exact acc_step d L fl tab (wL L).val (2 * t1.val + 1) (2 * k.val) 0 _ hRA ⟨7, by decide⟩ ⟨2, by decide⟩ _ rfl _ hw_v1919 _ (k1_off73_form ..) _ _
    have a_v1979 : pair1_last.sl.v1979 d L tab k r g1 g2 hR hin = AccMath.accVec (rowF fl tab (wL L).val (2 * t1.val + 1) (2 * k.val)) (offF fl (wL L).val (2 * t1.val + 1) (2 * k.val)) 2 9 := by
      rw [show pair1_last.sl.v1979 d L tab k r g1 g2 hR hin = addf (pair1_last.sl.v1943 d L tab k r g1 g2 hR hin) (pair1_last.sl.v1978 d L tab k r g1 g2 hR hin) from rfl, a_v1943]
      exact acc_step d L fl tab (wL L).val (2 * t1.val + 1) (2 * k.val) 0 _ hRA ⟨8, by decide⟩ ⟨2, by decide⟩ _ rfl _ hw_v1955 _ (k1_off74_form ..) _ _
    have a_v2015 : pair1_last.sl.v2015 d L tab k r g1 g2 hR hin = AccMath.accVec (rowF fl tab (wL L).val (2 * t1.val + 1) (2 * k.val)) (offF fl (wL L).val (2 * t1.val + 1) (2 * k.val)) 2 10 := by
      rw [show pair1_last.sl.v2015 d L tab k r g1 g2 hR hin = addf (pair1_last.sl.v1979 d L tab k r g1 g2 hR hin) (pair1_last.sl.v2014 d L tab k r g1 g2 hR hin) from rfl, a_v1979]
      exact acc_step d L fl tab (wL L).val (2 * t1.val + 1) (2 * k.val) 0 _ hRA ⟨9, by decide⟩ ⟨2, by decide⟩ _ rfl _ hw_v1991 _ (k1_off75_form ..) _ _
    have a_v2051 : pair1_last.sl.v2051 d L tab k r g1 g2 hR hin = AccMath.accVec (rowF fl tab (wL L).val (2 * t1.val + 1) (2 * k.val)) (offF fl (wL L).val (2 * t1.val + 1) (2 * k.val)) 2 11 := by
      rw [show pair1_last.sl.v2051 d L tab k r g1 g2 hR hin = addf (pair1_last.sl.v2015 d L tab k r g1 g2 hR hin) (pair1_last.sl.v2050 d L tab k r g1 g2 hR hin) from rfl, a_v2015]
      exact acc_step d L fl tab (wL L).val (2 * t1.val + 1) (2 * k.val) 0 _ hRA ⟨10, by decide⟩ ⟨2, by decide⟩ _ rfl _ hw_v2027 _ (k1_off76_form ..) _ _
    have a_v2087 : pair1_last.sl.v2087 d L tab k r g1 g2 hR hin = AccMath.accVec (rowF fl tab (wL L).val (2 * t1.val + 1) (2 * k.val)) (offF fl (wL L).val (2 * t1.val + 1) (2 * k.val)) 2 12 := by
      rw [show pair1_last.sl.v2087 d L tab k r g1 g2 hR hin = addf (pair1_last.sl.v2051 d L tab k r g1 g2 hR hin) (pair1_last.sl.v2086 d L tab k r g1 g2 hR hin) from rfl, a_v2051]
      exact acc_step d L fl tab (wL L).val (2 * t1.val + 1) (2 * k.val) 0 _ hRA ⟨11, by decide⟩ ⟨2, by decide⟩ _ rfl _ hw_v2063 _ (k1_off77_form ..) _ _
    have a_v2123 : pair1_last.sl.v2123 d L tab k r g1 g2 hR hin = AccMath.accVec (rowF fl tab (wL L).val (2 * t1.val + 1) (2 * k.val)) (offF fl (wL L).val (2 * t1.val + 1) (2 * k.val)) 2 13 := by
      rw [show pair1_last.sl.v2123 d L tab k r g1 g2 hR hin = addf (pair1_last.sl.v2087 d L tab k r g1 g2 hR hin) (pair1_last.sl.v2122 d L tab k r g1 g2 hR hin) from rfl, a_v2087]
      exact acc_step d L fl tab (wL L).val (2 * t1.val + 1) (2 * k.val) 0 _ hRA ⟨12, by decide⟩ ⟨2, by decide⟩ _ rfl _ hw_v2099 _ (k1_off78_form ..) _ _
    have a_v2159 : pair1_last.sl.v2159 d L tab k r g1 g2 hR hin = AccMath.accVec (rowF fl tab (wL L).val (2 * t1.val + 1) (2 * k.val)) (offF fl (wL L).val (2 * t1.val + 1) (2 * k.val)) 2 14 := by
      rw [show pair1_last.sl.v2159 d L tab k r g1 g2 hR hin = addf (pair1_last.sl.v2123 d L tab k r g1 g2 hR hin) (pair1_last.sl.v2158 d L tab k r g1 g2 hR hin) from rfl, a_v2123]
      exact acc_step d L fl tab (wL L).val (2 * t1.val + 1) (2 * k.val) 0 _ hRA ⟨13, by decide⟩ ⟨2, by decide⟩ _ rfl _ hw_v2135 _ (k1_off79_form ..) _ _
    have a_v2195 : pair1_last.sl.v2195 d L tab k r g1 g2 hR hin = AccMath.accVec (rowF fl tab (wL L).val (2 * t1.val + 1) (2 * k.val)) (offF fl (wL L).val (2 * t1.val + 1) (2 * k.val)) 2 15 := by
      rw [show pair1_last.sl.v2195 d L tab k r g1 g2 hR hin = addf (pair1_last.sl.v2159 d L tab k r g1 g2 hR hin) (pair1_last.sl.v2194 d L tab k r g1 g2 hR hin) from rfl, a_v2159]
      exact acc_step d L fl tab (wL L).val (2 * t1.val + 1) (2 * k.val) 0 _ hRA ⟨14, by decide⟩ ⟨2, by decide⟩ _ rfl _ hw_v2171 _ (k1_off80_form ..) _ _
    have a_v2231 : pair1_last.sl.v2231 d L tab k r g1 g2 hR hin = AccMath.accVec (rowF fl tab (wL L).val (2 * t1.val + 1) (2 * k.val)) (offF fl (wL L).val (2 * t1.val + 1) (2 * k.val)) 2 16 := by
      rw [show pair1_last.sl.v2231 d L tab k r g1 g2 hR hin = addf (pair1_last.sl.v2195 d L tab k r g1 g2 hR hin) (pair1_last.sl.v2230 d L tab k r g1 g2 hR hin) from rfl, a_v2195]
      exact acc_step d L fl tab (wL L).val (2 * t1.val + 1) (2 * k.val) 0 _ hRA ⟨15, by decide⟩ ⟨2, by decide⟩ _ rfl _ hw_v2207 _ (k1_off81_form ..) _ _
    have a_v1691_1 : pair1_last.sl.v1691_1 d L tab k r g1 g2 hR hin = AccMath.accVec (rowF fl tab (wL L).val (2 * t1.val + 1) (2 * k.val)) (offF fl (wL L).val (2 * t1.val + 1) (2 * k.val)) 2 17 := by
      rw [show pair1_last.sl.v1691_1 d L tab k r g1 g2 hR hin = addf (pair1_last.sl.v2231 d L tab k r g1 g2 hR hin) (pair1_last.sl.v1690_1 d L tab k r g1 g2 hR hin) from rfl, a_v2231]
      exact acc_step d L fl tab (wL L).val (2 * t1.val + 1) (2 * k.val) 0 _ hRA ⟨16, by decide⟩ ⟨2, by decide⟩ _ rfl _ hw_v1667_1 _ (k1_off66_form ..) _ _
    have a_v1727_1 : pair1_last.sl.v1727_1 d L tab k r g1 g2 hR hin = AccMath.accVec (rowF fl tab (wL L).val (2 * t1.val + 1) (2 * k.val)) (offF fl (wL L).val (2 * t1.val + 1) (2 * k.val)) 2 18 := by
      rw [show pair1_last.sl.v1727_1 d L tab k r g1 g2 hR hin = addf (pair1_last.sl.v1691_1 d L tab k r g1 g2 hR hin) (pair1_last.sl.v1726_1 d L tab k r g1 g2 hR hin) from rfl, a_v1691_1]
      exact acc_step d L fl tab (wL L).val (2 * t1.val + 1) (2 * k.val) 0 _ hRA ⟨17, by decide⟩ ⟨2, by decide⟩ _ rfl _ hw_v1703_1 _ (k1_off67_form ..) _ _
    have a_v1763_1 : pair1_last.sl.v1763_1 d L tab k r g1 g2 hR hin = AccMath.accVec (rowF fl tab (wL L).val (2 * t1.val + 1) (2 * k.val)) (offF fl (wL L).val (2 * t1.val + 1) (2 * k.val)) 2 19 := by
      rw [show pair1_last.sl.v1763_1 d L tab k r g1 g2 hR hin = addf (pair1_last.sl.v1727_1 d L tab k r g1 g2 hR hin) (pair1_last.sl.v1762_1 d L tab k r g1 g2 hR hin) from rfl, a_v1727_1]
      exact acc_step d L fl tab (wL L).val (2 * t1.val + 1) (2 * k.val) 0 _ hRA ⟨18, by decide⟩ ⟨2, by decide⟩ _ rfl _ hw_v1739_1 _ (k1_off68_form ..) _ _
    have a_v1799_1 : pair1_last.sl.v1799_1 d L tab k r g1 g2 hR hin = AccMath.accVec (rowF fl tab (wL L).val (2 * t1.val + 1) (2 * k.val)) (offF fl (wL L).val (2 * t1.val + 1) (2 * k.val)) 2 20 := by
      rw [show pair1_last.sl.v1799_1 d L tab k r g1 g2 hR hin = addf (pair1_last.sl.v1763_1 d L tab k r g1 g2 hR hin) (pair1_last.sl.v1798_1 d L tab k r g1 g2 hR hin) from rfl, a_v1763_1]
      exact acc_step d L fl tab (wL L).val (2 * t1.val + 1) (2 * k.val) 0 _ hRA ⟨19, by decide⟩ ⟨2, by decide⟩ _ rfl _ hw_v1775_1 _ (k1_off69_form ..) _ _
    have a_v1835_1 : pair1_last.sl.v1835_1 d L tab k r g1 g2 hR hin = AccMath.accVec (rowF fl tab (wL L).val (2 * t1.val + 1) (2 * k.val)) (offF fl (wL L).val (2 * t1.val + 1) (2 * k.val)) 2 21 := by
      rw [show pair1_last.sl.v1835_1 d L tab k r g1 g2 hR hin = addf (pair1_last.sl.v1799_1 d L tab k r g1 g2 hR hin) (pair1_last.sl.v1834_1 d L tab k r g1 g2 hR hin) from rfl, a_v1799_1]
      exact acc_step d L fl tab (wL L).val (2 * t1.val + 1) (2 * k.val) 0 _ hRA ⟨20, by decide⟩ ⟨2, by decide⟩ _ rfl _ hw_v1811_1 _ (k1_off70_form ..) _ _
    have a_v1871_1 : pair1_last.sl.v1871_1 d L tab k r g1 g2 hR hin = AccMath.accVec (rowF fl tab (wL L).val (2 * t1.val + 1) (2 * k.val)) (offF fl (wL L).val (2 * t1.val + 1) (2 * k.val)) 2 22 := by
      rw [show pair1_last.sl.v1871_1 d L tab k r g1 g2 hR hin = addf (pair1_last.sl.v1835_1 d L tab k r g1 g2 hR hin) (pair1_last.sl.v1870_1 d L tab k r g1 g2 hR hin) from rfl, a_v1835_1]
      exact acc_step d L fl tab (wL L).val (2 * t1.val + 1) (2 * k.val) 0 _ hRA ⟨21, by decide⟩ ⟨2, by decide⟩ _ rfl _ hw_v1847_1 _ (k1_off71_form ..) _ _
    have a_v1907_1 : pair1_last.sl.v1907_1 d L tab k r g1 g2 hR hin = AccMath.accVec (rowF fl tab (wL L).val (2 * t1.val + 1) (2 * k.val)) (offF fl (wL L).val (2 * t1.val + 1) (2 * k.val)) 2 23 := by
      rw [show pair1_last.sl.v1907_1 d L tab k r g1 g2 hR hin = addf (pair1_last.sl.v1871_1 d L tab k r g1 g2 hR hin) (pair1_last.sl.v1906_1 d L tab k r g1 g2 hR hin) from rfl, a_v1871_1]
      exact acc_step d L fl tab (wL L).val (2 * t1.val + 1) (2 * k.val) 0 _ hRA ⟨22, by decide⟩ ⟨2, by decide⟩ _ rfl _ hw_v1883_1 _ (k1_off72_form ..) _ _
    have a_v1943_1 : pair1_last.sl.v1943_1 d L tab k r g1 g2 hR hin = AccMath.accVec (rowF fl tab (wL L).val (2 * t1.val + 1) (2 * k.val)) (offF fl (wL L).val (2 * t1.val + 1) (2 * k.val)) 2 24 := by
      rw [show pair1_last.sl.v1943_1 d L tab k r g1 g2 hR hin = addf (pair1_last.sl.v1907_1 d L tab k r g1 g2 hR hin) (pair1_last.sl.v1942_1 d L tab k r g1 g2 hR hin) from rfl, a_v1907_1]
      exact acc_step d L fl tab (wL L).val (2 * t1.val + 1) (2 * k.val) 0 _ hRA ⟨23, by decide⟩ ⟨2, by decide⟩ _ rfl _ hw_v1919_1 _ (k1_off73_form ..) _ _
    have a_v1979_1 : pair1_last.sl.v1979_1 d L tab k r g1 g2 hR hin = AccMath.accVec (rowF fl tab (wL L).val (2 * t1.val + 1) (2 * k.val)) (offF fl (wL L).val (2 * t1.val + 1) (2 * k.val)) 2 25 := by
      rw [show pair1_last.sl.v1979_1 d L tab k r g1 g2 hR hin = addf (pair1_last.sl.v1943_1 d L tab k r g1 g2 hR hin) (pair1_last.sl.v1978_1 d L tab k r g1 g2 hR hin) from rfl, a_v1943_1]
      exact acc_step d L fl tab (wL L).val (2 * t1.val + 1) (2 * k.val) 0 _ hRA ⟨24, by decide⟩ ⟨2, by decide⟩ _ rfl _ hw_v1955_1 _ (k1_off74_form ..) _ _
    have a_v2015_1 : pair1_last.sl.v2015_1 d L tab k r g1 g2 hR hin = AccMath.accVec (rowF fl tab (wL L).val (2 * t1.val + 1) (2 * k.val)) (offF fl (wL L).val (2 * t1.val + 1) (2 * k.val)) 2 26 := by
      rw [show pair1_last.sl.v2015_1 d L tab k r g1 g2 hR hin = addf (pair1_last.sl.v1979_1 d L tab k r g1 g2 hR hin) (pair1_last.sl.v2014_1 d L tab k r g1 g2 hR hin) from rfl, a_v1979_1]
      exact acc_step d L fl tab (wL L).val (2 * t1.val + 1) (2 * k.val) 0 _ hRA ⟨25, by decide⟩ ⟨2, by decide⟩ _ rfl _ hw_v1991_1 _ (k1_off75_form ..) _ _
    have a_v2051_1 : pair1_last.sl.v2051_1 d L tab k r g1 g2 hR hin = AccMath.accVec (rowF fl tab (wL L).val (2 * t1.val + 1) (2 * k.val)) (offF fl (wL L).val (2 * t1.val + 1) (2 * k.val)) 2 27 := by
      rw [show pair1_last.sl.v2051_1 d L tab k r g1 g2 hR hin = addf (pair1_last.sl.v2015_1 d L tab k r g1 g2 hR hin) (pair1_last.sl.v2050_1 d L tab k r g1 g2 hR hin) from rfl, a_v2015_1]
      exact acc_step d L fl tab (wL L).val (2 * t1.val + 1) (2 * k.val) 0 _ hRA ⟨26, by decide⟩ ⟨2, by decide⟩ _ rfl _ hw_v2027_1 _ (k1_off76_form ..) _ _
    have a_v2087_1 : pair1_last.sl.v2087_1 d L tab k r g1 g2 hR hin = AccMath.accVec (rowF fl tab (wL L).val (2 * t1.val + 1) (2 * k.val)) (offF fl (wL L).val (2 * t1.val + 1) (2 * k.val)) 2 28 := by
      rw [show pair1_last.sl.v2087_1 d L tab k r g1 g2 hR hin = addf (pair1_last.sl.v2051_1 d L tab k r g1 g2 hR hin) (pair1_last.sl.v2086_1 d L tab k r g1 g2 hR hin) from rfl, a_v2051_1]
      exact acc_step d L fl tab (wL L).val (2 * t1.val + 1) (2 * k.val) 0 _ hRA ⟨27, by decide⟩ ⟨2, by decide⟩ _ rfl _ hw_v2063_1 _ (k1_off77_form ..) _ _
    have a_v2123_1 : pair1_last.sl.v2123_1 d L tab k r g1 g2 hR hin = AccMath.accVec (rowF fl tab (wL L).val (2 * t1.val + 1) (2 * k.val)) (offF fl (wL L).val (2 * t1.val + 1) (2 * k.val)) 2 29 := by
      rw [show pair1_last.sl.v2123_1 d L tab k r g1 g2 hR hin = addf (pair1_last.sl.v2087_1 d L tab k r g1 g2 hR hin) (pair1_last.sl.v2122_1 d L tab k r g1 g2 hR hin) from rfl, a_v2087_1]
      exact acc_step d L fl tab (wL L).val (2 * t1.val + 1) (2 * k.val) 0 _ hRA ⟨28, by decide⟩ ⟨2, by decide⟩ _ rfl _ hw_v2099_1 _ (k1_off78_form ..) _ _
    have a_v2159_1 : pair1_last.sl.v2159_1 d L tab k r g1 g2 hR hin = AccMath.accVec (rowF fl tab (wL L).val (2 * t1.val + 1) (2 * k.val)) (offF fl (wL L).val (2 * t1.val + 1) (2 * k.val)) 2 30 := by
      rw [show pair1_last.sl.v2159_1 d L tab k r g1 g2 hR hin = addf (pair1_last.sl.v2123_1 d L tab k r g1 g2 hR hin) (pair1_last.sl.v2158_1 d L tab k r g1 g2 hR hin) from rfl, a_v2123_1]
      exact acc_step d L fl tab (wL L).val (2 * t1.val + 1) (2 * k.val) 0 _ hRA ⟨29, by decide⟩ ⟨2, by decide⟩ _ rfl _ hw_v2135_1 _ (k1_off79_form ..) _ _
    have a_v2195_1 : pair1_last.sl.v2195_1 d L tab k r g1 g2 hR hin = AccMath.accVec (rowF fl tab (wL L).val (2 * t1.val + 1) (2 * k.val)) (offF fl (wL L).val (2 * t1.val + 1) (2 * k.val)) 2 31 := by
      rw [show pair1_last.sl.v2195_1 d L tab k r g1 g2 hR hin = addf (pair1_last.sl.v2159_1 d L tab k r g1 g2 hR hin) (pair1_last.sl.v2194_1 d L tab k r g1 g2 hR hin) from rfl, a_v2159_1]
      exact acc_step d L fl tab (wL L).val (2 * t1.val + 1) (2 * k.val) 0 _ hRA ⟨30, by decide⟩ ⟨2, by decide⟩ _ rfl _ hw_v2171_1 _ (k1_off80_form ..) _ _
    have a_v2231_1 : pair1_last.sl.v2231_1 d L tab k r g1 g2 hR hin = AccMath.accVec (rowF fl tab (wL L).val (2 * t1.val + 1) (2 * k.val)) (offF fl (wL L).val (2 * t1.val + 1) (2 * k.val)) 2 32 := by
      rw [show pair1_last.sl.v2231_1 d L tab k r g1 g2 hR hin = addf (pair1_last.sl.v2195_1 d L tab k r g1 g2 hR hin) (pair1_last.sl.v2230_1 d L tab k r g1 g2 hR hin) from rfl, a_v2195_1]
      exact acc_step d L fl tab (wL L).val (2 * t1.val + 1) (2 * k.val) 0 _ hRA ⟨31, by decide⟩ ⟨2, by decide⟩ _ rfl _ hw_v2207_1 _ (k1_off81_form ..) _ _
    have a_v1691_2 : pair1_last.sl.v1691_2 d L tab k r g1 g2 hR hin = AccMath.accVec (rowF fl tab (wL L).val (2 * t1.val + 1) (2 * k.val)) (offF fl (wL L).val (2 * t1.val + 1) (2 * k.val)) 2 33 := by
      rw [show pair1_last.sl.v1691_2 d L tab k r g1 g2 hR hin = addf (pair1_last.sl.v2231_1 d L tab k r g1 g2 hR hin) (pair1_last.sl.v1690_2 d L tab k r g1 g2 hR hin) from rfl, a_v2231_1]
      exact acc_step d L fl tab (wL L).val (2 * t1.val + 1) (2 * k.val) 0 _ hRA ⟨32, by decide⟩ ⟨2, by decide⟩ _ rfl _ hw_v1667_2 _ (k1_off66_form ..) _ _
    have a_v1727_2 : pair1_last.sl.v1727_2 d L tab k r g1 g2 hR hin = AccMath.accVec (rowF fl tab (wL L).val (2 * t1.val + 1) (2 * k.val)) (offF fl (wL L).val (2 * t1.val + 1) (2 * k.val)) 2 34 := by
      rw [show pair1_last.sl.v1727_2 d L tab k r g1 g2 hR hin = addf (pair1_last.sl.v1691_2 d L tab k r g1 g2 hR hin) (pair1_last.sl.v1726_2 d L tab k r g1 g2 hR hin) from rfl, a_v1691_2]
      exact acc_step d L fl tab (wL L).val (2 * t1.val + 1) (2 * k.val) 0 _ hRA ⟨33, by decide⟩ ⟨2, by decide⟩ _ rfl _ hw_v1703_2 _ (k1_off67_form ..) _ _
    have a_v1763_2 : pair1_last.sl.v1763_2 d L tab k r g1 g2 hR hin = AccMath.accVec (rowF fl tab (wL L).val (2 * t1.val + 1) (2 * k.val)) (offF fl (wL L).val (2 * t1.val + 1) (2 * k.val)) 2 35 := by
      rw [show pair1_last.sl.v1763_2 d L tab k r g1 g2 hR hin = addf (pair1_last.sl.v1727_2 d L tab k r g1 g2 hR hin) (pair1_last.sl.v1762_2 d L tab k r g1 g2 hR hin) from rfl, a_v1727_2]
      exact acc_step d L fl tab (wL L).val (2 * t1.val + 1) (2 * k.val) 0 _ hRA ⟨34, by decide⟩ ⟨2, by decide⟩ _ rfl _ hw_v1739_2 _ (k1_off68_form ..) _ _
    have a_v1799_2 : pair1_last.sl.v1799_2 d L tab k r g1 g2 hR hin = AccMath.accVec (rowF fl tab (wL L).val (2 * t1.val + 1) (2 * k.val)) (offF fl (wL L).val (2 * t1.val + 1) (2 * k.val)) 2 36 := by
      rw [show pair1_last.sl.v1799_2 d L tab k r g1 g2 hR hin = addf (pair1_last.sl.v1763_2 d L tab k r g1 g2 hR hin) (pair1_last.sl.v1798_2 d L tab k r g1 g2 hR hin) from rfl, a_v1763_2]
      exact acc_step d L fl tab (wL L).val (2 * t1.val + 1) (2 * k.val) 0 _ hRA ⟨35, by decide⟩ ⟨2, by decide⟩ _ rfl _ hw_v1775_2 _ (k1_off69_form ..) _ _
    have a_v1835_2 : pair1_last.sl.v1835_2 d L tab k r g1 g2 hR hin = AccMath.accVec (rowF fl tab (wL L).val (2 * t1.val + 1) (2 * k.val)) (offF fl (wL L).val (2 * t1.val + 1) (2 * k.val)) 2 37 := by
      rw [show pair1_last.sl.v1835_2 d L tab k r g1 g2 hR hin = addf (pair1_last.sl.v1799_2 d L tab k r g1 g2 hR hin) (pair1_last.sl.v1834_2 d L tab k r g1 g2 hR hin) from rfl, a_v1799_2]
      exact acc_step d L fl tab (wL L).val (2 * t1.val + 1) (2 * k.val) 0 _ hRA ⟨36, by decide⟩ ⟨2, by decide⟩ _ rfl _ hw_v1811_2 _ (k1_off70_form ..) _ _
    have a_v1871_2 : pair1_last.sl.v1871_2 d L tab k r g1 g2 hR hin = AccMath.accVec (rowF fl tab (wL L).val (2 * t1.val + 1) (2 * k.val)) (offF fl (wL L).val (2 * t1.val + 1) (2 * k.val)) 2 38 := by
      rw [show pair1_last.sl.v1871_2 d L tab k r g1 g2 hR hin = addf (pair1_last.sl.v1835_2 d L tab k r g1 g2 hR hin) (pair1_last.sl.v1870_2 d L tab k r g1 g2 hR hin) from rfl, a_v1835_2]
      exact acc_step d L fl tab (wL L).val (2 * t1.val + 1) (2 * k.val) 0 _ hRA ⟨37, by decide⟩ ⟨2, by decide⟩ _ rfl _ hw_v1847_2 _ (k1_off71_form ..) _ _
    have a_v1907_2 : pair1_last.sl.v1907_2 d L tab k r g1 g2 hR hin = AccMath.accVec (rowF fl tab (wL L).val (2 * t1.val + 1) (2 * k.val)) (offF fl (wL L).val (2 * t1.val + 1) (2 * k.val)) 2 39 := by
      rw [show pair1_last.sl.v1907_2 d L tab k r g1 g2 hR hin = addf (pair1_last.sl.v1871_2 d L tab k r g1 g2 hR hin) (pair1_last.sl.v1906_2 d L tab k r g1 g2 hR hin) from rfl, a_v1871_2]
      exact acc_step d L fl tab (wL L).val (2 * t1.val + 1) (2 * k.val) 0 _ hRA ⟨38, by decide⟩ ⟨2, by decide⟩ _ rfl _ hw_v1883_2 _ (k1_off72_form ..) _ _
    have a_v1943_2 : pair1_last.sl.v1943_2 d L tab k r g1 g2 hR hin = AccMath.accVec (rowF fl tab (wL L).val (2 * t1.val + 1) (2 * k.val)) (offF fl (wL L).val (2 * t1.val + 1) (2 * k.val)) 2 40 := by
      rw [show pair1_last.sl.v1943_2 d L tab k r g1 g2 hR hin = addf (pair1_last.sl.v1907_2 d L tab k r g1 g2 hR hin) (pair1_last.sl.v1942_2 d L tab k r g1 g2 hR hin) from rfl, a_v1907_2]
      exact acc_step d L fl tab (wL L).val (2 * t1.val + 1) (2 * k.val) 0 _ hRA ⟨39, by decide⟩ ⟨2, by decide⟩ _ rfl _ hw_v1919_2 _ (k1_off73_form ..) _ _
    have a_v1979_2 : pair1_last.sl.v1979_2 d L tab k r g1 g2 hR hin = AccMath.accVec (rowF fl tab (wL L).val (2 * t1.val + 1) (2 * k.val)) (offF fl (wL L).val (2 * t1.val + 1) (2 * k.val)) 2 41 := by
      rw [show pair1_last.sl.v1979_2 d L tab k r g1 g2 hR hin = addf (pair1_last.sl.v1943_2 d L tab k r g1 g2 hR hin) (pair1_last.sl.v1978_2 d L tab k r g1 g2 hR hin) from rfl, a_v1943_2]
      exact acc_step d L fl tab (wL L).val (2 * t1.val + 1) (2 * k.val) 0 _ hRA ⟨40, by decide⟩ ⟨2, by decide⟩ _ rfl _ hw_v1955_2 _ (k1_off74_form ..) _ _
    have a_v2015_2 : pair1_last.sl.v2015_2 d L tab k r g1 g2 hR hin = AccMath.accVec (rowF fl tab (wL L).val (2 * t1.val + 1) (2 * k.val)) (offF fl (wL L).val (2 * t1.val + 1) (2 * k.val)) 2 42 := by
      rw [show pair1_last.sl.v2015_2 d L tab k r g1 g2 hR hin = addf (pair1_last.sl.v1979_2 d L tab k r g1 g2 hR hin) (pair1_last.sl.v2014_2 d L tab k r g1 g2 hR hin) from rfl, a_v1979_2]
      exact acc_step d L fl tab (wL L).val (2 * t1.val + 1) (2 * k.val) 0 _ hRA ⟨41, by decide⟩ ⟨2, by decide⟩ _ rfl _ hw_v1991_2 _ (k1_off75_form ..) _ _
    have a_v2051_2 : pair1_last.sl.v2051_2 d L tab k r g1 g2 hR hin = AccMath.accVec (rowF fl tab (wL L).val (2 * t1.val + 1) (2 * k.val)) (offF fl (wL L).val (2 * t1.val + 1) (2 * k.val)) 2 43 := by
      rw [show pair1_last.sl.v2051_2 d L tab k r g1 g2 hR hin = addf (pair1_last.sl.v2015_2 d L tab k r g1 g2 hR hin) (pair1_last.sl.v2050_2 d L tab k r g1 g2 hR hin) from rfl, a_v2015_2]
      exact acc_step d L fl tab (wL L).val (2 * t1.val + 1) (2 * k.val) 0 _ hRA ⟨42, by decide⟩ ⟨2, by decide⟩ _ rfl _ hw_v2027_2 _ (k1_off76_form ..) _ _
    have a_v2087_2 : pair1_last.sl.v2087_2 d L tab k r g1 g2 hR hin = AccMath.accVec (rowF fl tab (wL L).val (2 * t1.val + 1) (2 * k.val)) (offF fl (wL L).val (2 * t1.val + 1) (2 * k.val)) 2 44 := by
      rw [show pair1_last.sl.v2087_2 d L tab k r g1 g2 hR hin = addf (pair1_last.sl.v2051_2 d L tab k r g1 g2 hR hin) (pair1_last.sl.v2086_2 d L tab k r g1 g2 hR hin) from rfl, a_v2051_2]
      exact acc_step d L fl tab (wL L).val (2 * t1.val + 1) (2 * k.val) 0 _ hRA ⟨43, by decide⟩ ⟨2, by decide⟩ _ rfl _ hw_v2063_2 _ (k1_off77_form ..) _ _
    have a_v2123_2 : pair1_last.sl.v2123_2 d L tab k r g1 g2 hR hin = AccMath.accVec (rowF fl tab (wL L).val (2 * t1.val + 1) (2 * k.val)) (offF fl (wL L).val (2 * t1.val + 1) (2 * k.val)) 2 45 := by
      rw [show pair1_last.sl.v2123_2 d L tab k r g1 g2 hR hin = addf (pair1_last.sl.v2087_2 d L tab k r g1 g2 hR hin) (pair1_last.sl.v2122_2 d L tab k r g1 g2 hR hin) from rfl, a_v2087_2]
      exact acc_step d L fl tab (wL L).val (2 * t1.val + 1) (2 * k.val) 0 _ hRA ⟨44, by decide⟩ ⟨2, by decide⟩ _ rfl _ hw_v2099_2 _ (k1_off78_form ..) _ _
    have a_v2159_2 : pair1_last.sl.v2159_2 d L tab k r g1 g2 hR hin = AccMath.accVec (rowF fl tab (wL L).val (2 * t1.val + 1) (2 * k.val)) (offF fl (wL L).val (2 * t1.val + 1) (2 * k.val)) 2 46 := by
      rw [show pair1_last.sl.v2159_2 d L tab k r g1 g2 hR hin = addf (pair1_last.sl.v2123_2 d L tab k r g1 g2 hR hin) (pair1_last.sl.v2158_2 d L tab k r g1 g2 hR hin) from rfl, a_v2123_2]
      exact acc_step d L fl tab (wL L).val (2 * t1.val + 1) (2 * k.val) 0 _ hRA ⟨45, by decide⟩ ⟨2, by decide⟩ _ rfl _ hw_v2135_2 _ (k1_off79_form ..) _ _
    have a_v2195_2 : pair1_last.sl.v2195_2 d L tab k r g1 g2 hR hin = AccMath.accVec (rowF fl tab (wL L).val (2 * t1.val + 1) (2 * k.val)) (offF fl (wL L).val (2 * t1.val + 1) (2 * k.val)) 2 47 := by
      rw [show pair1_last.sl.v2195_2 d L tab k r g1 g2 hR hin = addf (pair1_last.sl.v2159_2 d L tab k r g1 g2 hR hin) (pair1_last.sl.v2194_2 d L tab k r g1 g2 hR hin) from rfl, a_v2159_2]
      exact acc_step d L fl tab (wL L).val (2 * t1.val + 1) (2 * k.val) 0 _ hRA ⟨46, by decide⟩ ⟨2, by decide⟩ _ rfl _ hw_v2171_2 _ (k1_off80_form ..) _ _
    have a_v2231_2 : pair1_last.sl.v2231_2 d L tab k r g1 g2 hR hin = AccMath.accVec (rowF fl tab (wL L).val (2 * t1.val + 1) (2 * k.val)) (offF fl (wL L).val (2 * t1.val + 1) (2 * k.val)) 2 48 := by
      rw [show pair1_last.sl.v2231_2 d L tab k r g1 g2 hR hin = addf (pair1_last.sl.v2195_2 d L tab k r g1 g2 hR hin) (pair1_last.sl.v2230_2 d L tab k r g1 g2 hR hin) from rfl, a_v2195_2]
      exact acc_step d L fl tab (wL L).val (2 * t1.val + 1) (2 * k.val) 0 _ hRA ⟨47, by decide⟩ ⟨2, by decide⟩ _ rfl _ hw_v2207_2 _ (k1_off81_form ..) _ _
    have a_v1480 : pair1_last.sl.v1480 d L tab k r g1 g2 hR hin = AccMath.accVec (rowF fl tab (wL L).val (2 * t1.val + 1) (2 * k.val)) (offF fl (wL L).val (2 * t1.val + 1) (2 * k.val)) 2 49 := by
      rw [show pair1_last.sl.v1480 d L tab k r g1 g2 hR hin = addf (pair1_last.sl.v2231_2 d L tab k r g1 g2 hR hin) (pair1_last.sl.v1479 d L tab k r g1 g2 hR hin) from rfl, a_v2231_2]
      exact acc_step d L fl tab (wL L).val (2 * t1.val + 1) (2 * k.val) 0 _ hRA ⟨48, by decide⟩ ⟨2, by decide⟩ _ rfl _ hw_v1456 _ (k1_off83_form ..) _ _
    have a_v1514 : pair1_last.sl.v1514 d L tab k r g1 g2 hR hin = AccMath.accVec (rowF fl tab (wL L).val (2 * t1.val + 1) (2 * k.val)) (offF fl (wL L).val (2 * t1.val + 1) (2 * k.val)) 2 50 := by
      rw [show pair1_last.sl.v1514 d L tab k r g1 g2 hR hin = addf (pair1_last.sl.v1480 d L tab k r g1 g2 hR hin) (pair1_last.sl.v1513 d L tab k r g1 g2 hR hin) from rfl, a_v1480]
      exact acc_step d L fl tab (wL L).val (2 * t1.val + 1) (2 * k.val) 0 _ hRA ⟨49, by decide⟩ ⟨2, by decide⟩ _ rfl _ hw_v1490 _ (k1_off84_form ..) _ _
    have a_v1445_A3 : pair1_last.sl.v1445 = AccMath.accVec (rowF fl tab (wL L).val (2 * t1.val + 1) (2 * k.val)) (offF fl (wL L).val (2 * t1.val + 1) (2 * k.val)) 3 0 := acc_zero fl tab (wL L).val (2 * t1.val + 1) (2 * k.val) 3
    have a_v1699 : pair1_last.sl.v1699 d L tab k r g1 g2 hR hin = AccMath.accVec (rowF fl tab (wL L).val (2 * t1.val + 1) (2 * k.val)) (offF fl (wL L).val (2 * t1.val + 1) (2 * k.val)) 3 1 := by
      rw [show pair1_last.sl.v1699 d L tab k r g1 g2 hR hin = addf (pair1_last.sl.v1445) (pair1_last.sl.v1698 d L tab k r g1 g2 hR hin) from rfl, a_v1445_A3]
      exact acc_step d L fl tab (wL L).val (2 * t1.val + 1) (2 * k.val) 0 _ hRA ⟨0, by decide⟩ ⟨3, by decide⟩ _ rfl _ hw_v1667 _ (k1_off66_form ..) _ _
    have a_v1735 : pair1_last.sl.v1735 d L tab k r g1 g2 hR hin = AccMath.accVec (rowF fl tab (wL L).val (2 * t1.val + 1) (2 * k.val)) (offF fl (wL L).val (2 * t1.val + 1) (2 * k.val)) 3 2 := by
      rw [show pair1_last.sl.v1735 d L tab k r g1 g2 hR hin = addf (pair1_last.sl.v1699 d L tab k r g1 g2 hR hin) (pair1_last.sl.v1734 d L tab k r g1 g2 hR hin) from rfl, a_v1699]
      exact acc_step d L fl tab (wL L).val (2 * t1.val + 1) (2 * k.val) 0 _ hRA ⟨1, by decide⟩ ⟨3, by decide⟩ _ rfl _ hw_v1703 _ (k1_off67_form ..) _ _
    have a_v1771 : pair1_last.sl.v1771 d L tab k r g1 g2 hR hin = AccMath.accVec (rowF fl tab (wL L).val (2 * t1.val + 1) (2 * k.val)) (offF fl (wL L).val (2 * t1.val + 1) (2 * k.val)) 3 3 := by
      rw [show pair1_last.sl.v1771 d L tab k r g1 g2 hR hin = addf (pair1_last.sl.v1735 d L tab k r g1 g2 hR hin) (pair1_last.sl.v1770 d L tab k r g1 g2 hR hin) from rfl, a_v1735]
      exact acc_step d L fl tab (wL L).val (2 * t1.val + 1) (2 * k.val) 0 _ hRA ⟨2, by decide⟩ ⟨3, by decide⟩ _ rfl _ hw_v1739 _ (k1_off68_form ..) _ _
    have a_v1807 : pair1_last.sl.v1807 d L tab k r g1 g2 hR hin = AccMath.accVec (rowF fl tab (wL L).val (2 * t1.val + 1) (2 * k.val)) (offF fl (wL L).val (2 * t1.val + 1) (2 * k.val)) 3 4 := by
      rw [show pair1_last.sl.v1807 d L tab k r g1 g2 hR hin = addf (pair1_last.sl.v1771 d L tab k r g1 g2 hR hin) (pair1_last.sl.v1806 d L tab k r g1 g2 hR hin) from rfl, a_v1771]
      exact acc_step d L fl tab (wL L).val (2 * t1.val + 1) (2 * k.val) 0 _ hRA ⟨3, by decide⟩ ⟨3, by decide⟩ _ rfl _ hw_v1775 _ (k1_off69_form ..) _ _
    have a_v1843 : pair1_last.sl.v1843 d L tab k r g1 g2 hR hin = AccMath.accVec (rowF fl tab (wL L).val (2 * t1.val + 1) (2 * k.val)) (offF fl (wL L).val (2 * t1.val + 1) (2 * k.val)) 3 5 := by
      rw [show pair1_last.sl.v1843 d L tab k r g1 g2 hR hin = addf (pair1_last.sl.v1807 d L tab k r g1 g2 hR hin) (pair1_last.sl.v1842 d L tab k r g1 g2 hR hin) from rfl, a_v1807]
      exact acc_step d L fl tab (wL L).val (2 * t1.val + 1) (2 * k.val) 0 _ hRA ⟨4, by decide⟩ ⟨3, by decide⟩ _ rfl _ hw_v1811 _ (k1_off70_form ..) _ _
    have a_v1879 : pair1_last.sl.v1879 d L tab k r g1 g2 hR hin = AccMath.accVec (rowF fl tab (wL L).val (2 * t1.val + 1) (2 * k.val)) (offF fl (wL L).val (2 * t1.val + 1) (2 * k.val)) 3 6 := by
      rw [show pair1_last.sl.v1879 d L tab k r g1 g2 hR hin = addf (pair1_last.sl.v1843 d L tab k r g1 g2 hR hin) (pair1_last.sl.v1878 d L tab k r g1 g2 hR hin) from rfl, a_v1843]
      exact acc_step d L fl tab (wL L).val (2 * t1.val + 1) (2 * k.val) 0 _ hRA ⟨5, by decide⟩ ⟨3, by decide⟩ _ rfl _ hw_v1847 _ (k1_off71_form ..) _ _
    have a_v1915 : pair1_last.sl.v1915 d L tab k r g1 g2 hR hin = AccMath.accVec (rowF fl tab (wL L).val (2 * t1.val + 1) (2 * k.val)) (offF fl (wL L).val (2 * t1.val + 1) (2 * k.val)) 3 7 := by
      rw [show pair1_last.sl.v1915 d L tab k r g1 g2 hR hin = addf (pair1_last.sl.v1879 d L tab k r g1 g2 hR hin) (pair1_last.sl.v1914 d L tab k r g1 g2 hR hin) from rfl, a_v1879]
      exact acc_step d L fl tab (wL L).val (2 * t1.val + 1) (2 * k.val) 0 _ hRA ⟨6, by decide⟩ ⟨3, by decide⟩ _ rfl _ hw_v1883 _ (k1_off72_form ..) _ _
    have a_v1951 : pair1_last.sl.v1951 d L tab k r g1 g2 hR hin = AccMath.accVec (rowF fl tab (wL L).val (2 * t1.val + 1) (2 * k.val)) (offF fl (wL L).val (2 * t1.val + 1) (2 * k.val)) 3 8 := by
      rw [show pair1_last.sl.v1951 d L tab k r g1 g2 hR hin = addf (pair1_last.sl.v1915 d L tab k r g1 g2 hR hin) (pair1_last.sl.v1950 d L tab k r g1 g2 hR hin) from rfl, a_v1915]
      exact acc_step d L fl tab (wL L).val (2 * t1.val + 1) (2 * k.val) 0 _ hRA ⟨7, by decide⟩ ⟨3, by decide⟩ _ rfl _ hw_v1919 _ (k1_off73_form ..) _ _
    have a_v1987 : pair1_last.sl.v1987 d L tab k r g1 g2 hR hin = AccMath.accVec (rowF fl tab (wL L).val (2 * t1.val + 1) (2 * k.val)) (offF fl (wL L).val (2 * t1.val + 1) (2 * k.val)) 3 9 := by
      rw [show pair1_last.sl.v1987 d L tab k r g1 g2 hR hin = addf (pair1_last.sl.v1951 d L tab k r g1 g2 hR hin) (pair1_last.sl.v1986 d L tab k r g1 g2 hR hin) from rfl, a_v1951]
      exact acc_step d L fl tab (wL L).val (2 * t1.val + 1) (2 * k.val) 0 _ hRA ⟨8, by decide⟩ ⟨3, by decide⟩ _ rfl _ hw_v1955 _ (k1_off74_form ..) _ _
    have a_v2023 : pair1_last.sl.v2023 d L tab k r g1 g2 hR hin = AccMath.accVec (rowF fl tab (wL L).val (2 * t1.val + 1) (2 * k.val)) (offF fl (wL L).val (2 * t1.val + 1) (2 * k.val)) 3 10 := by
      rw [show pair1_last.sl.v2023 d L tab k r g1 g2 hR hin = addf (pair1_last.sl.v1987 d L tab k r g1 g2 hR hin) (pair1_last.sl.v2022 d L tab k r g1 g2 hR hin) from rfl, a_v1987]
      exact acc_step d L fl tab (wL L).val (2 * t1.val + 1) (2 * k.val) 0 _ hRA ⟨9, by decide⟩ ⟨3, by decide⟩ _ rfl _ hw_v1991 _ (k1_off75_form ..) _ _
    have a_v2059 : pair1_last.sl.v2059 d L tab k r g1 g2 hR hin = AccMath.accVec (rowF fl tab (wL L).val (2 * t1.val + 1) (2 * k.val)) (offF fl (wL L).val (2 * t1.val + 1) (2 * k.val)) 3 11 := by
      rw [show pair1_last.sl.v2059 d L tab k r g1 g2 hR hin = addf (pair1_last.sl.v2023 d L tab k r g1 g2 hR hin) (pair1_last.sl.v2058 d L tab k r g1 g2 hR hin) from rfl, a_v2023]
      exact acc_step d L fl tab (wL L).val (2 * t1.val + 1) (2 * k.val) 0 _ hRA ⟨10, by decide⟩ ⟨3, by decide⟩ _ rfl _ hw_v2027 _ (k1_off76_form ..) _ _
    have a_v2095 : pair1_last.sl.v2095 d L tab k r g1 g2 hR hin = AccMath.accVec (rowF fl tab (wL L).val (2 * t1.val + 1) (2 * k.val)) (offF fl (wL L).val (2 * t1.val + 1) (2 * k.val)) 3 12 := by
      rw [show pair1_last.sl.v2095 d L tab k r g1 g2 hR hin = addf (pair1_last.sl.v2059 d L tab k r g1 g2 hR hin) (pair1_last.sl.v2094 d L tab k r g1 g2 hR hin) from rfl, a_v2059]
      exact acc_step d L fl tab (wL L).val (2 * t1.val + 1) (2 * k.val) 0 _ hRA ⟨11, by decide⟩ ⟨3, by decide⟩ _ rfl _ hw_v2063 _ (k1_off77_form ..) _ _
    have a_v2131 : pair1_last.sl.v2131 d L tab k r g1 g2 hR hin = AccMath.accVec (rowF fl tab (wL L).val (2 * t1.val + 1) (2 * k.val)) (offF fl (wL L).val (2 * t1.val + 1) (2 * k.val)) 3 13 := by
      rw [show pair1_last.sl.v2131 d L tab k r g1 g2 hR hin = addf (pair1_last.sl.v2095 d L tab k r g1 g2 hR hin) (pair1_last.sl.v2130 d L tab k r g1 g2 hR hin) from rfl, a_v2095]
      exact acc_step d L fl tab (wL L).val (2 * t1.val + 1) (2 * k.val) 0 _ hRA ⟨12, by decide⟩ ⟨3, by decide⟩ _ rfl _ hw_v2099 _ (k1_off78_form ..) _ _
    have a_v2167 : pair1_last.sl.v2167 d L tab k r g1 g2 hR hin = AccMath.accVec (rowF fl tab (wL L).val (2 * t1.val + 1) (2 * k.val)) (offF fl (wL L).val (2 * t1.val + 1) (2 * k.val)) 3 14 := by
      rw [show pair1_last.sl.v2167 d L tab k r g1 g2 hR hin = addf (pair1_last.sl.v2131 d L tab k r g1 g2 hR hin) (pair1_last.sl.v2166 d L tab k r g1 g2 hR hin) from rfl, a_v2131]
      exact acc_step d L fl tab (wL L).val (2 * t1.val + 1) (2 * k.val) 0 _ hRA ⟨13, by decide⟩ ⟨3, by decide⟩ _ rfl _ hw_v2135 _ (k1_off79_form ..) _ _
    have a_v2203 : pair1_last.sl.v2203 d L tab k r g1 g2 hR hin = AccMath.accVec (rowF fl tab (wL L).val (2 * t1.val + 1) (2 * k.val)) (offF fl (wL L).val (2 * t1.val + 1) (2 * k.val)) 3 15 := by
      rw [show pair1_last.sl.v2203 d L tab k r g1 g2 hR hin = addf (pair1_last.sl.v2167 d L tab k r g1 g2 hR hin) (pair1_last.sl.v2202 d L tab k r g1 g2 hR hin) from rfl, a_v2167]
      exact acc_step d L fl tab (wL L).val (2 * t1.val + 1) (2 * k.val) 0 _ hRA ⟨14, by decide⟩ ⟨3, by decide⟩ _ rfl _ hw_v2171 _ (k1_off80_form ..) _ _
    have a_v2239 : pair1_last.sl.v2239 d L tab k r g1 g2 hR hin = AccMath.accVec (rowF fl tab (wL L).val (2 * t1.val + 1) (2 * k.val)) (offF fl (wL L).val (2 * t1.val + 1) (2 * k.val)) 3 16 := by
      rw [show pair1_last.sl.v2239 d L tab k r g1 g2 hR hin = addf (pair1_last.sl.v2203 d L tab k r g1 g2 hR hin) (pair1_last.sl.v2238 d L tab k r g1 g2 hR hin) from rfl, a_v2203]
      exact acc_step d L fl tab (wL L).val (2 * t1.val + 1) (2 * k.val) 0 _ hRA ⟨15, by decide⟩ ⟨3, by decide⟩ _ rfl _ hw_v2207 _ (k1_off81_form ..) _ _
    have a_v1699_1 : pair1_last.sl.v1699_1 d L tab k r g1 g2 hR hin = AccMath.accVec (rowF fl tab (wL L).val (2 * t1.val + 1) (2 * k.val)) (offF fl (wL L).val (2 * t1.val + 1) (2 * k.val)) 3 17 := by
      rw [show pair1_last.sl.v1699_1 d L tab k r g1 g2 hR hin = addf (pair1_last.sl.v2239 d L tab k r g1 g2 hR hin) (pair1_last.sl.v1698_1 d L tab k r g1 g2 hR hin) from rfl, a_v2239]
      exact acc_step d L fl tab (wL L).val (2 * t1.val + 1) (2 * k.val) 0 _ hRA ⟨16, by decide⟩ ⟨3, by decide⟩ _ rfl _ hw_v1667_1 _ (k1_off66_form ..) _ _
    have a_v1735_1 : pair1_last.sl.v1735_1 d L tab k r g1 g2 hR hin = AccMath.accVec (rowF fl tab (wL L).val (2 * t1.val + 1) (2 * k.val)) (offF fl (wL L).val (2 * t1.val + 1) (2 * k.val)) 3 18 := by
      rw [show pair1_last.sl.v1735_1 d L tab k r g1 g2 hR hin = addf (pair1_last.sl.v1699_1 d L tab k r g1 g2 hR hin) (pair1_last.sl.v1734_1 d L tab k r g1 g2 hR hin) from rfl, a_v1699_1]
      exact acc_step d L fl tab (wL L).val (2 * t1.val + 1) (2 * k.val) 0 _ hRA ⟨17, by decide⟩ ⟨3, by decide⟩ _ rfl _ hw_v1703_1 _ (k1_off67_form ..) _ _
    have a_v1771_1 : pair1_last.sl.v1771_1 d L tab k r g1 g2 hR hin = AccMath.accVec (rowF fl tab (wL L).val (2 * t1.val + 1) (2 * k.val)) (offF fl (wL L).val (2 * t1.val + 1) (2 * k.val)) 3 19 := by
      rw [show pair1_last.sl.v1771_1 d L tab k r g1 g2 hR hin = addf (pair1_last.sl.v1735_1 d L tab k r g1 g2 hR hin) (pair1_last.sl.v1770_1 d L tab k r g1 g2 hR hin) from rfl, a_v1735_1]
      exact acc_step d L fl tab (wL L).val (2 * t1.val + 1) (2 * k.val) 0 _ hRA ⟨18, by decide⟩ ⟨3, by decide⟩ _ rfl _ hw_v1739_1 _ (k1_off68_form ..) _ _
    have a_v1807_1 : pair1_last.sl.v1807_1 d L tab k r g1 g2 hR hin = AccMath.accVec (rowF fl tab (wL L).val (2 * t1.val + 1) (2 * k.val)) (offF fl (wL L).val (2 * t1.val + 1) (2 * k.val)) 3 20 := by
      rw [show pair1_last.sl.v1807_1 d L tab k r g1 g2 hR hin = addf (pair1_last.sl.v1771_1 d L tab k r g1 g2 hR hin) (pair1_last.sl.v1806_1 d L tab k r g1 g2 hR hin) from rfl, a_v1771_1]
      exact acc_step d L fl tab (wL L).val (2 * t1.val + 1) (2 * k.val) 0 _ hRA ⟨19, by decide⟩ ⟨3, by decide⟩ _ rfl _ hw_v1775_1 _ (k1_off69_form ..) _ _
    have a_v1843_1 : pair1_last.sl.v1843_1 d L tab k r g1 g2 hR hin = AccMath.accVec (rowF fl tab (wL L).val (2 * t1.val + 1) (2 * k.val)) (offF fl (wL L).val (2 * t1.val + 1) (2 * k.val)) 3 21 := by
      rw [show pair1_last.sl.v1843_1 d L tab k r g1 g2 hR hin = addf (pair1_last.sl.v1807_1 d L tab k r g1 g2 hR hin) (pair1_last.sl.v1842_1 d L tab k r g1 g2 hR hin) from rfl, a_v1807_1]
      exact acc_step d L fl tab (wL L).val (2 * t1.val + 1) (2 * k.val) 0 _ hRA ⟨20, by decide⟩ ⟨3, by decide⟩ _ rfl _ hw_v1811_1 _ (k1_off70_form ..) _ _
    have a_v1879_1 : pair1_last.sl.v1879_1 d L tab k r g1 g2 hR hin = AccMath.accVec (rowF fl tab (wL L).val (2 * t1.val + 1) (2 * k.val)) (offF fl (wL L).val (2 * t1.val + 1) (2 * k.val)) 3 22 := by
      rw [show pair1_last.sl.v1879_1 d L tab k r g1 g2 hR hin = addf (pair1_last.sl.v1843_1 d L tab k r g1 g2 hR hin) (pair1_last.sl.v1878_1 d L tab k r g1 g2 hR hin) from rfl, a_v1843_1]
      exact acc_step d L fl tab (wL L).val (2 * t1.val + 1) (2 * k.val) 0 _ hRA ⟨21, by decide⟩ ⟨3, by decide⟩ _ rfl _ hw_v1847_1 _ (k1_off71_form ..) _ _
    have a_v1915_1 : pair1_last.sl.v1915_1 d L tab k r g1 g2 hR hin = AccMath.accVec (rowF fl tab (wL L).val (2 * t1.val + 1) (2 * k.val)) (offF fl (wL L).val (2 * t1.val + 1) (2 * k.val)) 3 23 := by
      rw [show pair1_last.sl.v1915_1 d L tab k r g1 g2 hR hin = addf (pair1_last.sl.v1879_1 d L tab k r g1 g2 hR hin) (pair1_last.sl.v1914_1 d L tab k r g1 g2 hR hin) from rfl, a_v1879_1]
      exact acc_step d L fl tab (wL L).val (2 * t1.val + 1) (2 * k.val) 0 _ hRA ⟨22, by decide⟩ ⟨3, by decide⟩ _ rfl _ hw_v1883_1 _ (k1_off72_form ..) _ _
    have a_v1951_1 : pair1_last.sl.v1951_1 d L tab k r g1 g2 hR hin = AccMath.accVec (rowF fl tab (wL L).val (2 * t1.val + 1) (2 * k.val)) (offF fl (wL L).val (2 * t1.val + 1) (2 * k.val)) 3 24 := by
      rw [show pair1_last.sl.v1951_1 d L tab k r g1 g2 hR hin = addf (pair1_last.sl.v1915_1 d L tab k r g1 g2 hR hin) (pair1_last.sl.v1950_1 d L tab k r g1 g2 hR hin) from rfl, a_v1915_1]
      exact acc_step d L fl tab (wL L).val (2 * t1.val + 1) (2 * k.val) 0 _ hRA ⟨23, by decide⟩ ⟨3, by decide⟩ _ rfl _ hw_v1919_1 _ (k1_off73_form ..) _ _
    have a_v1987_1 : pair1_last.sl.v1987_1 d L tab k r g1 g2 hR hin = AccMath.accVec (rowF fl tab (wL L).val (2 * t1.val + 1) (2 * k.val)) (offF fl (wL L).val (2 * t1.val + 1) (2 * k.val)) 3 25 := by
      rw [show pair1_last.sl.v1987_1 d L tab k r g1 g2 hR hin = addf (pair1_last.sl.v1951_1 d L tab k r g1 g2 hR hin) (pair1_last.sl.v1986_1 d L tab k r g1 g2 hR hin) from rfl, a_v1951_1]
      exact acc_step d L fl tab (wL L).val (2 * t1.val + 1) (2 * k.val) 0 _ hRA ⟨24, by decide⟩ ⟨3, by decide⟩ _ rfl _ hw_v1955_1 _ (k1_off74_form ..) _ _
    have a_v2023_1 : pair1_last.sl.v2023_1 d L tab k r g1 g2 hR hin = AccMath.accVec (rowF fl tab (wL L).val (2 * t1.val + 1) (2 * k.val)) (offF fl (wL L).val (2 * t1.val + 1) (2 * k.val)) 3 26 := by
      rw [show pair1_last.sl.v2023_1 d L tab k r g1 g2 hR hin = addf (pair1_last.sl.v1987_1 d L tab k r g1 g2 hR hin) (pair1_last.sl.v2022_1 d L tab k r g1 g2 hR hin) from rfl, a_v1987_1]
      exact acc_step d L fl tab (wL L).val (2 * t1.val + 1) (2 * k.val) 0 _ hRA ⟨25, by decide⟩ ⟨3, by decide⟩ _ rfl _ hw_v1991_1 _ (k1_off75_form ..) _ _
    have a_v2059_1 : pair1_last.sl.v2059_1 d L tab k r g1 g2 hR hin = AccMath.accVec (rowF fl tab (wL L).val (2 * t1.val + 1) (2 * k.val)) (offF fl (wL L).val (2 * t1.val + 1) (2 * k.val)) 3 27 := by
      rw [show pair1_last.sl.v2059_1 d L tab k r g1 g2 hR hin = addf (pair1_last.sl.v2023_1 d L tab k r g1 g2 hR hin) (pair1_last.sl.v2058_1 d L tab k r g1 g2 hR hin) from rfl, a_v2023_1]
      exact acc_step d L fl tab (wL L).val (2 * t1.val + 1) (2 * k.val) 0 _ hRA ⟨26, by decide⟩ ⟨3, by decide⟩ _ rfl _ hw_v2027_1 _ (k1_off76_form ..) _ _
    have a_v2095_1 : pair1_last.sl.v2095_1 d L tab k r g1 g2 hR hin = AccMath.accVec (rowF fl tab (wL L).val (2 * t1.val + 1) (2 * k.val)) (offF fl (wL L).val (2 * t1.val + 1) (2 * k.val)) 3 28 := by
      rw [show pair1_last.sl.v2095_1 d L tab k r g1 g2 hR hin = addf (pair1_last.sl.v2059_1 d L tab k r g1 g2 hR hin) (pair1_last.sl.v2094_1 d L tab k r g1 g2 hR hin) from rfl, a_v2059_1]
      exact acc_step d L fl tab (wL L).val (2 * t1.val + 1) (2 * k.val) 0 _ hRA ⟨27, by decide⟩ ⟨3, by decide⟩ _ rfl _ hw_v2063_1 _ (k1_off77_form ..) _ _
    have a_v2131_1 : pair1_last.sl.v2131_1 d L tab k r g1 g2 hR hin = AccMath.accVec (rowF fl tab (wL L).val (2 * t1.val + 1) (2 * k.val)) (offF fl (wL L).val (2 * t1.val + 1) (2 * k.val)) 3 29 := by
      rw [show pair1_last.sl.v2131_1 d L tab k r g1 g2 hR hin = addf (pair1_last.sl.v2095_1 d L tab k r g1 g2 hR hin) (pair1_last.sl.v2130_1 d L tab k r g1 g2 hR hin) from rfl, a_v2095_1]
      exact acc_step d L fl tab (wL L).val (2 * t1.val + 1) (2 * k.val) 0 _ hRA ⟨28, by decide⟩ ⟨3, by decide⟩ _ rfl _ hw_v2099_1 _ (k1_off78_form ..) _ _
    have a_v2167_1 : pair1_last.sl.v2167_1 d L tab k r g1 g2 hR hin = AccMath.accVec (rowF fl tab (wL L).val (2 * t1.val + 1) (2 * k.val)) (offF fl (wL L).val (2 * t1.val + 1) (2 * k.val)) 3 30 := by
      rw [show pair1_last.sl.v2167_1 d L tab k r g1 g2 hR hin = addf (pair1_last.sl.v2131_1 d L tab k r g1 g2 hR hin) (pair1_last.sl.v2166_1 d L tab k r g1 g2 hR hin) from rfl, a_v2131_1]
      exact acc_step d L fl tab (wL L).val (2 * t1.val + 1) (2 * k.val) 0 _ hRA ⟨29, by decide⟩ ⟨3, by decide⟩ _ rfl _ hw_v2135_1 _ (k1_off79_form ..) _ _
    have a_v2203_1 : pair1_last.sl.v2203_1 d L tab k r g1 g2 hR hin = AccMath.accVec (rowF fl tab (wL L).val (2 * t1.val + 1) (2 * k.val)) (offF fl (wL L).val (2 * t1.val + 1) (2 * k.val)) 3 31 := by
      rw [show pair1_last.sl.v2203_1 d L tab k r g1 g2 hR hin = addf (pair1_last.sl.v2167_1 d L tab k r g1 g2 hR hin) (pair1_last.sl.v2202_1 d L tab k r g1 g2 hR hin) from rfl, a_v2167_1]
      exact acc_step d L fl tab (wL L).val (2 * t1.val + 1) (2 * k.val) 0 _ hRA ⟨30, by decide⟩ ⟨3, by decide⟩ _ rfl _ hw_v2171_1 _ (k1_off80_form ..) _ _
    have a_v2239_1 : pair1_last.sl.v2239_1 d L tab k r g1 g2 hR hin = AccMath.accVec (rowF fl tab (wL L).val (2 * t1.val + 1) (2 * k.val)) (offF fl (wL L).val (2 * t1.val + 1) (2 * k.val)) 3 32 := by
      rw [show pair1_last.sl.v2239_1 d L tab k r g1 g2 hR hin = addf (pair1_last.sl.v2203_1 d L tab k r g1 g2 hR hin) (pair1_last.sl.v2238_1 d L tab k r g1 g2 hR hin) from rfl, a_v2203_1]
      exact acc_step d L fl tab (wL L).val (2 * t1.val + 1) (2 * k.val) 0 _ hRA ⟨31, by decide⟩ ⟨3, by decide⟩ _ rfl _ hw_v2207_1 _ (k1_off81_form ..) _ _
    have a_v1699_2 : pair1_last.sl.v1699_2 d L tab k r g1 g2 hR hin = AccMath.accVec (rowF fl tab (wL L).val (2 * t1.val + 1) (2 * k.val)) (offF fl (wL L).val (2 * t1.val + 1) (2 * k.val)) 3 33 := by
      rw [show pair1_last.sl.v1699_2 d L tab k r g1 g2 hR hin = addf (pair1_last.sl.v2239_1 d L tab k r g1 g2 hR hin) (pair1_last.sl.v1698_2 d L tab k r g1 g2 hR hin) from rfl, a_v2239_1]
      exact acc_step d L fl tab (wL L).val (2 * t1.val + 1) (2 * k.val) 0 _ hRA ⟨32, by decide⟩ ⟨3, by decide⟩ _ rfl _ hw_v1667_2 _ (k1_off66_form ..) _ _
    have a_v1735_2 : pair1_last.sl.v1735_2 d L tab k r g1 g2 hR hin = AccMath.accVec (rowF fl tab (wL L).val (2 * t1.val + 1) (2 * k.val)) (offF fl (wL L).val (2 * t1.val + 1) (2 * k.val)) 3 34 := by
      rw [show pair1_last.sl.v1735_2 d L tab k r g1 g2 hR hin = addf (pair1_last.sl.v1699_2 d L tab k r g1 g2 hR hin) (pair1_last.sl.v1734_2 d L tab k r g1 g2 hR hin) from rfl, a_v1699_2]
      exact acc_step d L fl tab (wL L).val (2 * t1.val + 1) (2 * k.val) 0 _ hRA ⟨33, by decide⟩ ⟨3, by decide⟩ _ rfl _ hw_v1703_2 _ (k1_off67_form ..) _ _
    have a_v1771_2 : pair1_last.sl.v1771_2 d L tab k r g1 g2 hR hin = AccMath.accVec (rowF fl tab (wL L).val (2 * t1.val + 1) (2 * k.val)) (offF fl (wL L).val (2 * t1.val + 1) (2 * k.val)) 3 35 := by
      rw [show pair1_last.sl.v1771_2 d L tab k r g1 g2 hR hin = addf (pair1_last.sl.v1735_2 d L tab k r g1 g2 hR hin) (pair1_last.sl.v1770_2 d L tab k r g1 g2 hR hin) from rfl, a_v1735_2]
      exact acc_step d L fl tab (wL L).val (2 * t1.val + 1) (2 * k.val) 0 _ hRA ⟨34, by decide⟩ ⟨3, by decide⟩ _ rfl _ hw_v1739_2 _ (k1_off68_form ..) _ _
    have a_v1807_2 : pair1_last.sl.v1807_2 d L tab k r g1 g2 hR hin = AccMath.accVec (rowF fl tab (wL L).val (2 * t1.val + 1) (2 * k.val)) (offF fl (wL L).val (2 * t1.val + 1) (2 * k.val)) 3 36 := by
      rw [show pair1_last.sl.v1807_2 d L tab k r g1 g2 hR hin = addf (pair1_last.sl.v1771_2 d L tab k r g1 g2 hR hin) (pair1_last.sl.v1806_2 d L tab k r g1 g2 hR hin) from rfl, a_v1771_2]
      exact acc_step d L fl tab (wL L).val (2 * t1.val + 1) (2 * k.val) 0 _ hRA ⟨35, by decide⟩ ⟨3, by decide⟩ _ rfl _ hw_v1775_2 _ (k1_off69_form ..) _ _
    have a_v1843_2 : pair1_last.sl.v1843_2 d L tab k r g1 g2 hR hin = AccMath.accVec (rowF fl tab (wL L).val (2 * t1.val + 1) (2 * k.val)) (offF fl (wL L).val (2 * t1.val + 1) (2 * k.val)) 3 37 := by
      rw [show pair1_last.sl.v1843_2 d L tab k r g1 g2 hR hin = addf (pair1_last.sl.v1807_2 d L tab k r g1 g2 hR hin) (pair1_last.sl.v1842_2 d L tab k r g1 g2 hR hin) from rfl, a_v1807_2]
      exact acc_step d L fl tab (wL L).val (2 * t1.val + 1) (2 * k.val) 0 _ hRA ⟨36, by decide⟩ ⟨3, by decide⟩ _ rfl _ hw_v1811_2 _ (k1_off70_form ..) _ _
    have a_v1879_2 : pair1_last.sl.v1879_2 d L tab k r g1 g2 hR hin = AccMath.accVec (rowF fl tab (wL L).val (2 * t1.val + 1) (2 * k.val)) (offF fl (wL L).val (2 * t1.val + 1) (2 * k.val)) 3 38 := by
      rw [show pair1_last.sl.v1879_2 d L tab k r g1 g2 hR hin = addf (pair1_last.sl.v1843_2 d L tab k r g1 g2 hR hin) (pair1_last.sl.v1878_2 d L tab k r g1 g2 hR hin) from rfl, a_v1843_2]
      exact acc_step d L fl tab (wL L).val (2 * t1.val + 1) (2 * k.val) 0 _ hRA ⟨37, by decide⟩ ⟨3, by decide⟩ _ rfl _ hw_v1847_2 _ (k1_off71_form ..) _ _
    have a_v1915_2 : pair1_last.sl.v1915_2 d L tab k r g1 g2 hR hin = AccMath.accVec (rowF fl tab (wL L).val (2 * t1.val + 1) (2 * k.val)) (offF fl (wL L).val (2 * t1.val + 1) (2 * k.val)) 3 39 := by
      rw [show pair1_last.sl.v1915_2 d L tab k r g1 g2 hR hin = addf (pair1_last.sl.v1879_2 d L tab k r g1 g2 hR hin) (pair1_last.sl.v1914_2 d L tab k r g1 g2 hR hin) from rfl, a_v1879_2]
      exact acc_step d L fl tab (wL L).val (2 * t1.val + 1) (2 * k.val) 0 _ hRA ⟨38, by decide⟩ ⟨3, by decide⟩ _ rfl _ hw_v1883_2 _ (k1_off72_form ..) _ _
    have a_v1951_2 : pair1_last.sl.v1951_2 d L tab k r g1 g2 hR hin = AccMath.accVec (rowF fl tab (wL L).val (2 * t1.val + 1) (2 * k.val)) (offF fl (wL L).val (2 * t1.val + 1) (2 * k.val)) 3 40 := by
      rw [show pair1_last.sl.v1951_2 d L tab k r g1 g2 hR hin = addf (pair1_last.sl.v1915_2 d L tab k r g1 g2 hR hin) (pair1_last.sl.v1950_2 d L tab k r g1 g2 hR hin) from rfl, a_v1915_2]
      exact acc_step d L fl tab (wL L).val (2 * t1.val + 1) (2 * k.val) 0 _ hRA ⟨39, by decide⟩ ⟨3, by decide⟩ _ rfl _ hw_v1919_2 _ (k1_off73_form ..) _ _
    have a_v1987_2 : pair1_last.sl.v1987_2 d L tab k r g1 g2 hR hin = AccMath.accVec (rowF fl tab (wL L).val (2 * t1.val + 1) (2 * k.val)) (offF fl (wL L).val (2 * t1.val + 1) (2 * k.val)) 3 41 := by
      rw [show pair1_last.sl.v1987_2 d L tab k r g1 g2 hR hin = addf (pair1_last.sl.v1951_2 d L tab k r g1 g2 hR hin) (pair1_last.sl.v1986_2 d L tab k r g1 g2 hR hin) from rfl, a_v1951_2]
      exact acc_step d L fl tab (wL L).val (2 * t1.val + 1) (2 * k.val) 0 _ hRA ⟨40, by decide⟩ ⟨3, by decide⟩ _ rfl _ hw_v1955_2 _ (k1_off74_form ..) _ _
    have a_v2023_2 : pair1_last.sl.v2023_2 d L tab k r g1 g2 hR hin = AccMath.accVec (rowF fl tab (wL L).val (2 * t1.val + 1) (2 * k.val)) (offF fl (wL L).val (2 * t1.val + 1) (2 * k.val)) 3 42 := by
      rw [show pair1_last.sl.v2023_2 d L tab k r g1 g2 hR hin = addf (pair1_last.sl.v1987_2 d L tab k r g1 g2 hR hin) (pair1_last.sl.v2022_2 d L tab k r g1 g2 hR hin) from rfl, a_v1987_2]
      exact acc_step d L fl tab (wL L).val (2 * t1.val + 1) (2 * k.val) 0 _ hRA ⟨41, by decide⟩ ⟨3, by decide⟩ _ rfl _ hw_v1991_2 _ (k1_off75_form ..) _ _
    have a_v2059_2 : pair1_last.sl.v2059_2 d L tab k r g1 g2 hR hin = AccMath.accVec (rowF fl tab (wL L).val (2 * t1.val + 1) (2 * k.val)) (offF fl (wL L).val (2 * t1.val + 1) (2 * k.val)) 3 43 := by
      rw [show pair1_last.sl.v2059_2 d L tab k r g1 g2 hR hin = addf (pair1_last.sl.v2023_2 d L tab k r g1 g2 hR hin) (pair1_last.sl.v2058_2 d L tab k r g1 g2 hR hin) from rfl, a_v2023_2]
      exact acc_step d L fl tab (wL L).val (2 * t1.val + 1) (2 * k.val) 0 _ hRA ⟨42, by decide⟩ ⟨3, by decide⟩ _ rfl _ hw_v2027_2 _ (k1_off76_form ..) _ _
    have a_v2095_2 : pair1_last.sl.v2095_2 d L tab k r g1 g2 hR hin = AccMath.accVec (rowF fl tab (wL L).val (2 * t1.val + 1) (2 * k.val)) (offF fl (wL L).val (2 * t1.val + 1) (2 * k.val)) 3 44 := by
      rw [show pair1_last.sl.v2095_2 d L tab k r g1 g2 hR hin = addf (pair1_last.sl.v2059_2 d L tab k r g1 g2 hR hin) (pair1_last.sl.v2094_2 d L tab k r g1 g2 hR hin) from rfl, a_v2059_2]
      exact acc_step d L fl tab (wL L).val (2 * t1.val + 1) (2 * k.val) 0 _ hRA ⟨43, by decide⟩ ⟨3, by decide⟩ _ rfl _ hw_v2063_2 _ (k1_off77_form ..) _ _
    have a_v2131_2 : pair1_last.sl.v2131_2 d L tab k r g1 g2 hR hin = AccMath.accVec (rowF fl tab (wL L).val (2 * t1.val + 1) (2 * k.val)) (offF fl (wL L).val (2 * t1.val + 1) (2 * k.val)) 3 45 := by
      rw [show pair1_last.sl.v2131_2 d L tab k r g1 g2 hR hin = addf (pair1_last.sl.v2095_2 d L tab k r g1 g2 hR hin) (pair1_last.sl.v2130_2 d L tab k r g1 g2 hR hin) from rfl, a_v2095_2]
      exact acc_step d L fl tab (wL L).val (2 * t1.val + 1) (2 * k.val) 0 _ hRA ⟨44, by decide⟩ ⟨3, by decide⟩ _ rfl _ hw_v2099_2 _ (k1_off78_form ..) _ _
    have a_v2167_2 : pair1_last.sl.v2167_2 d L tab k r g1 g2 hR hin = AccMath.accVec (rowF fl tab (wL L).val (2 * t1.val + 1) (2 * k.val)) (offF fl (wL L).val (2 * t1.val + 1) (2 * k.val)) 3 46 := by
      rw [show pair1_last.sl.v2167_2 d L tab k r g1 g2 hR hin = addf (pair1_last.sl.v2131_2 d L tab k r g1 g2 hR hin) (pair1_last.sl.v2166_2 d L tab k r g1 g2 hR hin) from rfl, a_v2131_2]
      exact acc_step d L fl tab (wL L).val (2 * t1.val + 1) (2 * k.val) 0 _ hRA ⟨45, by decide⟩ ⟨3, by decide⟩ _ rfl _ hw_v2135_2 _ (k1_off79_form ..) _ _
    have a_v2203_2 : pair1_last.sl.v2203_2 d L tab k r g1 g2 hR hin = AccMath.accVec (rowF fl tab (wL L).val (2 * t1.val + 1) (2 * k.val)) (offF fl (wL L).val (2 * t1.val + 1) (2 * k.val)) 3 47 := by
      rw [show pair1_last.sl.v2203_2 d L tab k r g1 g2 hR hin = addf (pair1_last.sl.v2167_2 d L tab k r g1 g2 hR hin) (pair1_last.sl.v2202_2 d L tab k r g1 g2 hR hin) from rfl, a_v2167_2]
      exact acc_step d L fl tab (wL L).val (2 * t1.val + 1) (2 * k.val) 0 _ hRA ⟨46, by decide⟩ ⟨3, by decide⟩ _ rfl _ hw_v2171_2 _ (k1_off80_form ..) _ _
    have a_v2239_2 : pair1_last.sl.v2239_2 d L tab k r g1 g2 hR hin = AccMath.accVec (rowF fl tab (wL L).val (2 * t1.val + 1) (2 * k.val)) (offF fl (wL L).val (2 * t1.val + 1) (2 * k.val)) 3 48 := by
      rw [show pair1_last.sl.v2239_2 d L tab k r g1 g2 hR hin = addf (pair1_last.sl.v2203_2 d L tab k r g1 g2 hR hin) (pair1_last.sl.v2238_2 d L tab k r g1 g2 hR hin) from rfl, a_v2203_2]
      exact acc_step d L fl tab (wL L).val (2 * t1.val + 1) (2 * k.val) 0 _ hRA ⟨47, by decide⟩ ⟨3, by decide⟩ _ rfl _ hw_v2207_2 _ (k1_off81_form ..) _ _
    have a_v1488 : pair1_last.sl.v1488 d L tab k r g1 g2 hR hin = AccMath.accVec (rowF fl tab (wL L).val (2 * t1.val + 1) (2 * k.val)) (offF fl (wL L).val (2 * t1.val + 1) (2 * k.val)) 3 49 := by
      rw [show pair1_last.sl.v1488 d L tab k r g1 g2 hR hin = addf (pair1_last.sl.v2239_2 d L tab k r g1 g2 hR hin) (pair1_last.sl.v1487 d L tab k r g1 g2 hR hin) from rfl, a_v2239_2]
      exact acc_step d L fl tab (wL L).val (2 * t1.val + 1) (2 * k.val) 0 _ hRA ⟨48, by decide⟩ ⟨3, by decide⟩ _ rfl _ hw_v1456 _ (k1_off83_form ..) _ _
    have a_v1522 : pair1_last.sl.v1522 d L tab k r g1 g2 hR hin = AccMath.accVec (rowF fl tab (wL L).val (2 * t1.val + 1) (2 * k.val)) (offF fl (wL L).val (2 * t1.val + 1) (2 * k.val)) 3 50 := by
      rw [show pair1_last.sl.v1522 d L tab k r g1 g2 hR hin = addf (pair1_last.sl.v1488 d L tab k r g1 g2 hR hin) (pair1_last.sl.v1521 d L tab k r g1 g2 hR hin) from rfl, a_v1488]
      exact acc_step d L fl tab (wL L).val (2 * t1.val + 1) (2 * k.val) 0 _ hRA ⟨49, by decide⟩ ⟨3, by decide⟩ _ rfl _ hw_v1490 _ (k1_off84_form ..) _ _
    have a_v1561_B0 : pair1_last.sl.v1561 = AccMath.accVec (rowF fl tab (wL L).val (2 * t1.val + 1) (2 * k.val + 1)) (offF fl (wL L).val (2 * t1.val + 1) (2 * k.val + 1)) 0 0 := acc_zero fl tab (wL L).val (2 * t1.val + 1) (2 * k.val + 1) 0
    have a_v1675_3 : pair1_last.sl.v1675_3 d L tab k r g1 g2 hR hin = AccMath.accVec (rowF fl tab (wL L).val (2 * t1.val + 1) (2 * k.val + 1)) (offF fl (wL L).val (2 * t1.val + 1) (2 * k.val + 1)) 0 1 := by
      rw [show pair1_last.sl.v1675_3 d L tab k r g1 g2 hR hin = addf (pair1_last.sl.v1561) (pair1_last.sl.v1674_3 d L tab k r g1 g2 hR hin) from rfl, a_v1561_B0]
      exact acc_step d L fl tab (wL L).val (2 * t1.val + 1) (2 * k.val + 1) 1 _ hRB ⟨0, by decide⟩ ⟨0, by decide⟩ _ rfl _ hw_v1667_3 _ (k1_off93_form ..) _ _
    have a_v1711_3 : pair1_last.sl.v1711_3 d L tab k r g1 g2 hR hin = AccMath.accVec (rowF fl tab (wL L).val (2 * t1.val + 1) (2 * k.val + 1)) (offF fl (wL L).val (2 * t1.val + 1) (2 * k.val + 1)) 0 2 := by
      rw [show pair1_last.sl.v1711_3 d L tab k r g1 g2 hR hin = addf (pair1_last.sl.v1675_3 d L tab k r g1 g2 hR hin) (pair1_last.sl.v1710_3 d L tab k r g1 g2 hR hin) from rfl, a_v1675_3]
      exact acc_step d L fl tab (wL L).val (2 * t1.val + 1) (2 * k.val + 1) 1 _ hRB ⟨1, by decide⟩ ⟨0, by decide⟩ _ rfl _ hw_v1703_3 _ (k1_off94_form ..) _ _
    have a_v1747_3 : pair1_last.sl.v1747_3 d L tab k r g1 g2 hR hin = AccMath.accVec (rowF fl tab (wL L).val (2 * t1.val + 1) (2 * k.val + 1)) (offF fl (wL L).val (2 * t1.val + 1) (2 * k.val + 1)) 0 3 := by
      rw [show pair1_last.sl.v1747_3 d L tab k r g1 g2 hR hin = addf (pair1_last.sl.v1711_3 d L tab k r g1 g2 hR hin) (pair1_last.sl.v1746_3 d L tab k r g1 g2 hR hin) from rfl, a_v1711_3]
      exact acc_step d L fl tab (wL L).val (2 * t1.val + 1) (2 * k.val + 1) 1 _ hRB ⟨2, by decide⟩ ⟨0, by decide⟩ _ rfl _ hw_v1739_3 _ (k1_off95_form ..) _ _
    have a_v1783_3 : pair1_last.sl.v1783_3 d L tab k r g1 g2 hR hin = AccMath.accVec (rowF fl tab (wL L).val (2 * t1.val + 1) (2 * k.val + 1)) (offF fl (wL L).val (2 * t1.val + 1) (2 * k.val + 1)) 0 4 := by
      rw [show pair1_last.sl.v1783_3 d L tab k r g1 g2 hR hin = addf (pair1_last.sl.v1747_3 d L tab k r g1 g2 hR hin) (pair1_last.sl.v1782_3 d L tab k r g1 g2 hR hin) from rfl, a_v1747_3]
      exact acc_step d L fl tab (wL L).val (2 * t1.val + 1) (2 * k.val + 1) 1 _ hRB ⟨3, by decide⟩ ⟨0, by decide⟩ _ rfl _ hw_v1775_3 _ (k1_off96_form ..) _ _
    have a_v1819_3 : pair1_last.sl.v1819_3 d L tab k r g1 g2 hR hin = AccMath.accVec (rowF fl tab (wL L).val (2 * t1.val + 1) (2 * k.val + 1)) (offF fl (wL L).val (2 * t1.val + 1) (2 * k.val + 1)) 0 5 := by
      rw [show pair1_last.sl.v1819_3 d L tab k r g1 g2 hR hin = addf (pair1_last.sl.v1783_3 d L tab k r g1 g2 hR hin) (pair1_last.sl.v1818_3 d L tab k r g1 g2 hR hin) from rfl, a_v1783_3]
      exact acc_step d L fl tab (wL L).val (2 * t1.val + 1) (2 * k.val + 1) 1 _ hRB ⟨4, by decide⟩ ⟨0, by decide⟩ _ rfl _ hw_v1811_3 _ (k1_off97_form ..) _ _
    have a_v1855_3 : pair1_last.sl.v1855_3 d L tab k r g1 g2 hR hin = AccMath.accVec (rowF fl tab (wL L).val (2 * t1.val + 1) (2 * k.val + 1)) (offF fl (wL L).val (2 * t1.val + 1) (2 * k.val + 1)) 0 6 := by
      rw [show pair1_last.sl.v1855_3 d L tab k r g1 g2 hR hin = addf (pair1_last.sl.v1819_3 d L tab k r g1 g2 hR hin) (pair1_last.sl.v1854_3 d L tab k r g1 g2 hR hin) from rfl, a_v1819_3]
      exact acc_step d L fl tab (wL L).val (2 * t1.val + 1) (2 * k.val + 1) 1 _ hRB ⟨5, by decide⟩ ⟨0, by decide⟩ _ rfl _ hw_v1847_3 _ (k1_off98_form ..) _ _
    have a_v1891_3 : pair1_last.sl.v1891_3 d L tab k r g1 g2 hR hin = AccMath.accVec (rowF fl tab (wL L).val (2 * t1.val + 1) (2 * k.val + 1)) (offF fl (wL L).val (2 * t1.val + 1) (2 * k.val + 1)) 0 7 := by
      rw [show pair1_last.sl.v1891_3 d L tab k r g1 g2 hR hin = addf (pair1_last.sl.v1855_3 d L tab k r g1 g2 hR hin) (pair1_last.sl.v1890_3 d L tab k r g1 g2 hR hin) from rfl, a_v1855_3]
      exact acc_step d L fl tab (wL L).val (2 * t1.val + 1) (2 * k.val + 1) 1 _ hRB ⟨6, by decide⟩ ⟨0, by decide⟩ _ rfl _ hw_v1883_3 _ (k1_off99_form ..) _ _
    have a_v1927_3 : pair1_last.sl.v1927_3 d L tab k r g1 g2 hR hin = AccMath.accVec (rowF fl tab (wL L).val (2 * t1.val + 1) (2 * k.val + 1)) (offF fl (wL L).val (2 * t1.val + 1) (2 * k.val + 1)) 0 8 := by
      rw [show pair1_last.sl.v1927_3 d L tab k r g1 g2 hR hin = addf (pair1_last.sl.v1891_3 d L tab k r g1 g2 hR hin) (pair1_last.sl.v1926_3 d L tab k r g1 g2 hR hin) from rfl, a_v1891_3]
      exact acc_step d L fl tab (wL L).val (2 * t1.val + 1) (2 * k.val + 1) 1 _ hRB ⟨7, by decide⟩ ⟨0, by decide⟩ _ rfl _ hw_v1919_3 _ (k1_off100_form ..) _ _
    have a_v1963_3 : pair1_last.sl.v1963_3 d L tab k r g1 g2 hR hin = AccMath.accVec (rowF fl tab (wL L).val (2 * t1.val + 1) (2 * k.val + 1)) (offF fl (wL L).val (2 * t1.val + 1) (2 * k.val + 1)) 0 9 := by
      rw [show pair1_last.sl.v1963_3 d L tab k r g1 g2 hR hin = addf (pair1_last.sl.v1927_3 d L tab k r g1 g2 hR hin) (pair1_last.sl.v1962_3 d L tab k r g1 g2 hR hin) from rfl, a_v1927_3]
      exact acc_step d L fl tab (wL L).val (2 * t1.val + 1) (2 * k.val + 1) 1 _ hRB ⟨8, by decide⟩ ⟨0, by decide⟩ _ rfl _ hw_v1955_3 _ (k1_off101_form ..) _ _
    have a_v1999_3 : pair1_last.sl.v1999_3 d L tab k r g1 g2 hR hin = AccMath.accVec (rowF fl tab (wL L).val (2 * t1.val + 1) (2 * k.val + 1)) (offF fl (wL L).val (2 * t1.val + 1) (2 * k.val + 1)) 0 10 := by
      rw [show pair1_last.sl.v1999_3 d L tab k r g1 g2 hR hin = addf (pair1_last.sl.v1963_3 d L tab k r g1 g2 hR hin) (pair1_last.sl.v1998_3 d L tab k r g1 g2 hR hin) from rfl, a_v1963_3]
      exact acc_step d L fl tab (wL L).val (2 * t1.val + 1) (2 * k.val + 1) 1 _ hRB ⟨9, by decide⟩ ⟨0, by decide⟩ _ rfl _ hw_v1991_3 _ (k1_off102_form ..) _ _
    have a_v2035_3 : pair1_last.sl.v2035_3 d L tab k r g1 g2 hR hin = AccMath.accVec (rowF fl tab (wL L).val (2 * t1.val + 1) (2 * k.val + 1)) (offF fl (wL L).val (2 * t1.val + 1) (2 * k.val + 1)) 0 11 := by
      rw [show pair1_last.sl.v2035_3 d L tab k r g1 g2 hR hin = addf (pair1_last.sl.v1999_3 d L tab k r g1 g2 hR hin) (pair1_last.sl.v2034_3 d L tab k r g1 g2 hR hin) from rfl, a_v1999_3]
      exact acc_step d L fl tab (wL L).val (2 * t1.val + 1) (2 * k.val + 1) 1 _ hRB ⟨10, by decide⟩ ⟨0, by decide⟩ _ rfl _ hw_v2027_3 _ (k1_off103_form ..) _ _
    have a_v2071_3 : pair1_last.sl.v2071_3 d L tab k r g1 g2 hR hin = AccMath.accVec (rowF fl tab (wL L).val (2 * t1.val + 1) (2 * k.val + 1)) (offF fl (wL L).val (2 * t1.val + 1) (2 * k.val + 1)) 0 12 := by
      rw [show pair1_last.sl.v2071_3 d L tab k r g1 g2 hR hin = addf (pair1_last.sl.v2035_3 d L tab k r g1 g2 hR hin) (pair1_last.sl.v2070_3 d L tab k r g1 g2 hR hin) from rfl, a_v2035_3]
      exact acc_step d L fl tab (wL L).val (2 * t1.val + 1) (2 * k.val + 1) 1 _ hRB ⟨11, by decide⟩ ⟨0, by decide⟩ _ rfl _ hw_v2063_3 _ (k1_off104_form ..) _ _
    have a_v2107_3 : pair1_last.sl.v2107_3 d L tab k r g1 g2 hR hin = AccMath.accVec (rowF fl tab (wL L).val (2 * t1.val + 1) (2 * k.val + 1)) (offF fl (wL L).val (2 * t1.val + 1) (2 * k.val + 1)) 0 13 := by
      rw [show pair1_last.sl.v2107_3 d L tab k r g1 g2 hR hin = addf (pair1_last.sl.v2071_3 d L tab k r g1 g2 hR hin) (pair1_last.sl.v2106_3 d L tab k r g1 g2 hR hin) from rfl, a_v2071_3]
      exact acc_step d L fl tab (wL L).val (2 * t1.val + 1) (2 * k.val + 1) 1 _ hRB ⟨12, by decide⟩ ⟨0, by decide⟩ _ rfl _ hw_v2099_3 _ (k1_off105_form ..) _ _
    have a_v2143_3 : pair1_last.sl.v2143_3 d L tab k r g1 g2 hR hin = AccMath.accVec (rowF fl tab (wL L).val (2 * t1.val + 1) (2 * k.val + 1)) (offF fl (wL L).val (2 * t1.val + 1) (2 * k.val + 1)) 0 14 := by
      rw [show pair1_last.sl.v2143_3 d L tab k r g1 g2 hR hin = addf (pair1_last.sl.v2107_3 d L tab k r g1 g2 hR hin) (pair1_last.sl.v2142_3 d L tab k r g1 g2 hR hin) from rfl, a_v2107_3]
      exact acc_step d L fl tab (wL L).val (2 * t1.val + 1) (2 * k.val + 1) 1 _ hRB ⟨13, by decide⟩ ⟨0, by decide⟩ _ rfl _ hw_v2135_3 _ (k1_off106_form ..) _ _
    have a_v2179_3 : pair1_last.sl.v2179_3 d L tab k r g1 g2 hR hin = AccMath.accVec (rowF fl tab (wL L).val (2 * t1.val + 1) (2 * k.val + 1)) (offF fl (wL L).val (2 * t1.val + 1) (2 * k.val + 1)) 0 15 := by
      rw [show pair1_last.sl.v2179_3 d L tab k r g1 g2 hR hin = addf (pair1_last.sl.v2143_3 d L tab k r g1 g2 hR hin) (pair1_last.sl.v2178_3 d L tab k r g1 g2 hR hin) from rfl, a_v2143_3]
      exact acc_step d L fl tab (wL L).val (2 * t1.val + 1) (2 * k.val + 1) 1 _ hRB ⟨14, by decide⟩ ⟨0, by decide⟩ _ rfl _ hw_v2171_3 _ (k1_off107_form ..) _ _
    have a_v2215_3 : pair1_last.sl.v2215_3 d L tab k r g1 g2 hR hin = AccMath.accVec (rowF fl tab (wL L).val (2 * t1.val + 1) (2 * k.val + 1)) (offF fl (wL L).val (2 * t1.val + 1) (2 * k.val + 1)) 0 16 := by
      rw [show pair1_last.sl.v2215_3 d L tab k r g1 g2 hR hin = addf (pair1_last.sl.v2179_3 d L tab k r g1 g2 hR hin) (pair1_last.sl.v2214_3 d L tab k r g1 g2 hR hin) from rfl, a_v2179_3]
      exact acc_step d L fl tab (wL L).val (2 * t1.val + 1) (2 * k.val + 1) 1 _ hRB ⟨15, by decide⟩ ⟨0, by decide⟩ _ rfl _ hw_v2207_3 _ (k1_off108_form ..) _ _
    have a_v1675_4 : pair1_last.sl.v1675_4 d L tab k r g1 g2 hR hin = AccMath.accVec (rowF fl tab (wL L).val (2 * t1.val + 1) (2 * k.val + 1)) (offF fl (wL L).val (2 * t1.val + 1) (2 * k.val + 1)) 0 17 := by
      rw [show pair1_last.sl.v1675_4 d L tab k r g1 g2 hR hin = addf (pair1_last.sl.v2215_3 d L tab k r g1 g2 hR hin) (pair1_last.sl.v1674_4 d L tab k r g1 g2 hR hin) from rfl, a_v2215_3]
      exact acc_step d L fl tab (wL L).val (2 * t1.val + 1) (2 * k.val + 1) 1 _ hRB ⟨16, by decide⟩ ⟨0, by decide⟩ _ rfl _ hw_v1667_4 _ (k1_off93_form ..) _ _
    have a_v1711_4 : pair1_last.sl.v1711_4 d L tab k r g1 g2 hR hin = AccMath.accVec (rowF fl tab (wL L).val (2 * t1.val + 1) (2 * k.val + 1)) (offF fl (wL L).val (2 * t1.val + 1) (2 * k.val + 1)) 0 18 := by
      rw [show pair1_last.sl.v1711_4 d L tab k r g1 g2 hR hin = addf (pair1_last.sl.v1675_4 d L tab k r g1 g2 hR hin) (pair1_last.sl.v1710_4 d L tab k r g1 g2 hR hin) from rfl, a_v1675_4]
      exact acc_step d L fl tab (wL L).val (2 * t1.val + 1) (2 * k.val + 1) 1 _ hRB ⟨17, by decide⟩ ⟨0, by decide⟩ _ rfl _ hw_v1703_4 _ (k1_off94_form ..) _ _
    have a_v1747_4 : pair1_last.sl.v1747_4 d L tab k r g1 g2 hR hin = AccMath.accVec (rowF fl tab (wL L).val (2 * t1.val + 1) (2 * k.val + 1)) (offF fl (wL L).val (2 * t1.val + 1) (2 * k.val + 1)) 0 19 := by
      rw [show pair1_last.sl.v1747_4 d L tab k r g1 g2 hR hin = addf (pair1_last.sl.v1711_4 d L tab k r g1 g2 hR hin) (pair1_last.sl.v1746_4 d L tab k r g1 g2 hR hin) from rfl, a_v1711_4]
      exact acc_step d L fl tab (wL L).val (2 * t1.val + 1) (2 * k.val + 1) 1 _ hRB ⟨18, by decide⟩ ⟨0, by decide⟩ _ rfl _ hw_v1739_4 _ (k1_off95_form ..) _ _
    have a_v1783_4 : pair1_last.sl.v1783_4 d L tab k r g1 g2 hR hin = AccMath.accVec (rowF fl tab (wL L).val (2 * t1.val + 1) (2 * k.val + 1)) (offF fl (wL L).val (2 * t1.val + 1) (2 * k.val + 1)) 0 20 := by
      rw [show pair1_last.sl.v1783_4 d L tab k r g1 g2 hR hin = addf (pair1_last.sl.v1747_4 d L tab k r g1 g2 hR hin) (pair1_last.sl.v1782_4 d L tab k r g1 g2 hR hin) from rfl, a_v1747_4]
      exact acc_step d L fl tab (wL L).val (2 * t1.val + 1) (2 * k.val + 1) 1 _ hRB ⟨19, by decide⟩ ⟨0, by decide⟩ _ rfl _ hw_v1775_4 _ (k1_off96_form ..) _ _
    have a_v1819_4 : pair1_last.sl.v1819_4 d L tab k r g1 g2 hR hin = AccMath.accVec (rowF fl tab (wL L).val (2 * t1.val + 1) (2 * k.val + 1)) (offF fl (wL L).val (2 * t1.val + 1) (2 * k.val + 1)) 0 21 := by
      rw [show pair1_last.sl.v1819_4 d L tab k r g1 g2 hR hin = addf (pair1_last.sl.v1783_4 d L tab k r g1 g2 hR hin) (pair1_last.sl.v1818_4 d L tab k r g1 g2 hR hin) from rfl, a_v1783_4]
      exact acc_step d L fl tab (wL L).val (2 * t1.val + 1) (2 * k.val + 1) 1 _ hRB ⟨20, by decide⟩ ⟨0, by decide⟩ _ rfl _ hw_v1811_4 _ (k1_off97_form ..) _ _
    have a_v1855_4 : pair1_last.sl.v1855_4 d L tab k r g1 g2 hR hin = AccMath.accVec (rowF fl tab (wL L).val (2 * t1.val + 1) (2 * k.val + 1)) (offF fl (wL L).val (2 * t1.val + 1) (2 * k.val + 1)) 0 22 := by
      rw [show pair1_last.sl.v1855_4 d L tab k r g1 g2 hR hin = addf (pair1_last.sl.v1819_4 d L tab k r g1 g2 hR hin) (pair1_last.sl.v1854_4 d L tab k r g1 g2 hR hin) from rfl, a_v1819_4]
      exact acc_step d L fl tab (wL L).val (2 * t1.val + 1) (2 * k.val + 1) 1 _ hRB ⟨21, by decide⟩ ⟨0, by decide⟩ _ rfl _ hw_v1847_4 _ (k1_off98_form ..) _ _
    have a_v1891_4 : pair1_last.sl.v1891_4 d L tab k r g1 g2 hR hin = AccMath.accVec (rowF fl tab (wL L).val (2 * t1.val + 1) (2 * k.val + 1)) (offF fl (wL L).val (2 * t1.val + 1) (2 * k.val + 1)) 0 23 := by
      rw [show pair1_last.sl.v1891_4 d L tab k r g1 g2 hR hin = addf (pair1_last.sl.v1855_4 d L tab k r g1 g2 hR hin) (pair1_last.sl.v1890_4 d L tab k r g1 g2 hR hin) from rfl, a_v1855_4]
      exact acc_step d L fl tab (wL L).val (2 * t1.val + 1) (2 * k.val + 1) 1 _ hRB ⟨22, by decide⟩ ⟨0, by decide⟩ _ rfl _ hw_v1883_4 _ (k1_off99_form ..) _ _
    have a_v1927_4 : pair1_last.sl.v1927_4 d L tab k r g1 g2 hR hin = AccMath.accVec (rowF fl tab (wL L).val (2 * t1.val + 1) (2 * k.val + 1)) (offF fl (wL L).val (2 * t1.val + 1) (2 * k.val + 1)) 0 24 := by
      rw [show pair1_last.sl.v1927_4 d L tab k r g1 g2 hR hin = addf (pair1_last.sl.v1891_4 d L tab k r g1 g2 hR hin) (pair1_last.sl.v1926_4 d L tab k r g1 g2 hR hin) from rfl, a_v1891_4]
      exact acc_step d L fl tab (wL L).val (2 * t1.val + 1) (2 * k.val + 1) 1 _ hRB ⟨23, by decide⟩ ⟨0, by decide⟩ _ rfl _ hw_v1919_4 _ (k1_off100_form ..) _ _
    have a_v1963_4 : pair1_last.sl.v1963_4 d L tab k r g1 g2 hR hin = AccMath.accVec (rowF fl tab (wL L).val (2 * t1.val + 1) (2 * k.val + 1)) (offF fl (wL L).val (2 * t1.val + 1) (2 * k.val + 1)) 0 25 := by
      rw [show pair1_last.sl.v1963_4 d L tab k r g1 g2 hR hin = addf (pair1_last.sl.v1927_4 d L tab k r g1 g2 hR hin) (pair1_last.sl.v1962_4 d L tab k r g1 g2 hR hin) from rfl, a_v1927_4]
      exact acc_step d L fl tab (wL L).val (2 * t1.val + 1) (2 * k.val + 1) 1 _ hRB ⟨24, by decide⟩ ⟨0, by decide⟩ _ rfl _ hw_v1955_4 _ (k1_off101_form ..) _ _
    have a_v1999_4 : pair1_last.sl.v1999_4 d L tab k r g1 g2 hR hin = AccMath.accVec (rowF fl tab (wL L).val (2 * t1.val + 1) (2 * k.val + 1)) (offF fl (wL L).val (2 * t1.val + 1) (2 * k.val + 1)) 0 26 := by
      rw [show pair1_last.sl.v1999_4 d L tab k r g1 g2 hR hin = addf (pair1_last.sl.v1963_4 d L tab k r g1 g2 hR hin) (pair1_last.sl.v1998_4 d L tab k r g1 g2 hR hin) from rfl, a_v1963_4]
      exact acc_step d L fl tab (wL L).val (2 * t1.val + 1) (2 * k.val + 1) 1 _ hRB ⟨25, by decide⟩ ⟨0, by decide⟩ _ rfl _ hw_v1991_4 _ (k1_off102_form ..) _ _
    have a_v2035_4 : pair1_last.sl.v2035_4 d L tab k r g1 g2 hR hin = AccMath.accVec (rowF fl tab (wL L).val (2 * t1.val + 1) (2 * k.val + 1)) (offF fl (wL L).val (2 * t1.val + 1) (2 * k.val + 1)) 0 27 := by
      rw [show pair1_last.sl.v2035_4 d L tab k r g1 g2 hR hin = addf (pair1_last.sl.v1999_4 d L tab k r g1 g2 hR hin) (pair1_last.sl.v2034_4 d L tab k r g1 g2 hR hin) from rfl, a_v1999_4]
      exact acc_step d L fl tab (wL L).val (2 * t1.val + 1) (2 * k.val + 1) 1 _ hRB ⟨26, by decide⟩ ⟨0, by decide⟩ _ rfl _ hw_v2027_4 _ (k1_off103_form ..) _ _
    have a_v2071_4 : pair1_last.sl.v2071_4 d L tab k r g1 g2 hR hin = AccMath.accVec (rowF fl tab (wL L).val (2 * t1.val + 1) (2 * k.val + 1)) (offF fl (wL L).val (2 * t1.val + 1) (2 * k.val + 1)) 0 28 := by
      rw [show pair1_last.sl.v2071_4 d L tab k r g1 g2 hR hin = addf (pair1_last.sl.v2035_4 d L tab k r g1 g2 hR hin) (pair1_last.sl.v2070_4 d L tab k r g1 g2 hR hin) from rfl, a_v2035_4]
      exact acc_step d L fl tab (wL L).val (2 * t1.val + 1) (2 * k.val + 1) 1 _ hRB ⟨27, by decide⟩ ⟨0, by decide⟩ _ rfl _ hw_v2063_4 _ (k1_off104_form ..) _ _
    have a_v2107_4 : pair1_last.sl.v2107_4 d L tab k r g1 g2 hR hin = AccMath.accVec (rowF fl tab (wL L).val (2 * t1.val + 1) (2 * k.val + 1)) (offF fl (wL L).val (2 * t1.val + 1) (2 * k.val + 1)) 0 29 := by
      rw [show pair1_last.sl.v2107_4 d L tab k r g1 g2 hR hin = addf (pair1_last.sl.v2071_4 d L tab k r g1 g2 hR hin) (pair1_last.sl.v2106_4 d L tab k r g1 g2 hR hin) from rfl, a_v2071_4]
      exact acc_step d L fl tab (wL L).val (2 * t1.val + 1) (2 * k.val + 1) 1 _ hRB ⟨28, by decide⟩ ⟨0, by decide⟩ _ rfl _ hw_v2099_4 _ (k1_off105_form ..) _ _
    have a_v2143_4 : pair1_last.sl.v2143_4 d L tab k r g1 g2 hR hin = AccMath.accVec (rowF fl tab (wL L).val (2 * t1.val + 1) (2 * k.val + 1)) (offF fl (wL L).val (2 * t1.val + 1) (2 * k.val + 1)) 0 30 := by
      rw [show pair1_last.sl.v2143_4 d L tab k r g1 g2 hR hin = addf (pair1_last.sl.v2107_4 d L tab k r g1 g2 hR hin) (pair1_last.sl.v2142_4 d L tab k r g1 g2 hR hin) from rfl, a_v2107_4]
      exact acc_step d L fl tab (wL L).val (2 * t1.val + 1) (2 * k.val + 1) 1 _ hRB ⟨29, by decide⟩ ⟨0, by decide⟩ _ rfl _ hw_v2135_4 _ (k1_off106_form ..) _ _
    have a_v2179_4 : pair1_last.sl.v2179_4 d L tab k r g1 g2 hR hin = AccMath.accVec (rowF fl tab (wL L).val (2 * t1.val + 1) (2 * k.val + 1)) (offF fl (wL L).val (2 * t1.val + 1) (2 * k.val + 1)) 0 31 := by
      rw [show pair1_last.sl.v2179_4 d L tab k r g1 g2 hR hin = addf (pair1_last.sl.v2143_4 d L tab k r g1 g2 hR hin) (pair1_last.sl.v2178_4 d L tab k r g1 g2 hR hin) from rfl, a_v2143_4]
      exact acc_step d L fl tab (wL L).val (2 * t1.val + 1) (2 * k.val + 1) 1 _ hRB ⟨30, by decide⟩ ⟨0, by decide⟩ _ rfl _ hw_v2171_4 _ (k1_off107_form ..) _ _
    have a_v2215_4 : pair1_last.sl.v2215_4 d L tab k r g1 g2 hR hin = AccMath.accVec (rowF fl tab (wL L).val (2 * t1.val + 1) (2 * k.val + 1)) (offF fl (wL L).val (2 * t1.val + 1) (2 * k.val + 1)) 0 32 := by
      rw [show pair1_last.sl.v2215_4 d L tab k r g1 g2 hR hin = addf (pair1_last.sl.v2179_4 d L tab k r g1 g2 hR hin) (pair1_last.sl.v2214_4 d L tab k r g1 g2 hR hin) from rfl, a_v2179_4]
      exact acc_step d L fl tab (wL L).val (2 * t1.val + 1) (2 * k.val + 1) 1 _ hRB ⟨31, by decide⟩ ⟨0, by decide⟩ _ rfl _ hw_v2207_4 _ (k1_off108_form ..) _ _
    have a_v1675_5 : pair1_last.sl.v1675_5 d L tab k r g1 g2 hR hin = AccMath.accVec (rowF fl tab (wL L).val (2 * t1.val + 1) (2 * k.val + 1)) (offF fl (wL L).val (2 * t1.val + 1) (2 * k.val + 1)) 0 33 := by
      rw [show pair1_last.sl.v1675_5 d L tab k r g1 g2 hR hin = addf (pair1_last.sl.v2215_4 d L tab k r g1 g2 hR hin) (pair1_last.sl.v1674_5 d L tab k r g1 g2 hR hin) from rfl, a_v2215_4]
      exact acc_step d L fl tab (wL L).val (2 * t1.val + 1) (2 * k.val + 1) 1 _ hRB ⟨32, by decide⟩ ⟨0, by decide⟩ _ rfl _ hw_v1667_5 _ (k1_off93_form ..) _ _
    have a_v1711_5 : pair1_last.sl.v1711_5 d L tab k r g1 g2 hR hin = AccMath.accVec (rowF fl tab (wL L).val (2 * t1.val + 1) (2 * k.val + 1)) (offF fl (wL L).val (2 * t1.val + 1) (2 * k.val + 1)) 0 34 := by
      rw [show pair1_last.sl.v1711_5 d L tab k r g1 g2 hR hin = addf (pair1_last.sl.v1675_5 d L tab k r g1 g2 hR hin) (pair1_last.sl.v1710_5 d L tab k r g1 g2 hR hin) from rfl, a_v1675_5]
      exact acc_step d L fl tab (wL L).val (2 * t1.val + 1) (2 * k.val + 1) 1 _ hRB ⟨33, by decide⟩ ⟨0, by decide⟩ _ rfl _ hw_v1703_5 _ (k1_off94_form ..) _ _
    have a_v1747_5 : pair1_last.sl.v1747_5 d L tab k r g1 g2 hR hin = AccMath.accVec (rowF fl tab (wL L).val (2 * t1.val + 1) (2 * k.val + 1)) (offF fl (wL L).val (2 * t1.val + 1) (2 * k.val + 1)) 0 35 := by
      rw [show pair1_last.sl.v1747_5 d L tab k r g1 g2 hR hin = addf (pair1_last.sl.v1711_5 d L tab k r g1 g2 hR hin) (pair1_last.sl.v1746_5 d L tab k r g1 g2 hR hin) from rfl, a_v1711_5]
      exact acc_step d L fl tab (wL L).val (2 * t1.val + 1) (2 * k.val + 1) 1 _ hRB ⟨34, by decide⟩ ⟨0, by decide⟩ _ rfl _ hw_v1739_5 _ (k1_off95_form ..) _ _
    have a_v1783_5 : pair1_last.sl.v1783_5 d L tab k r g1 g2 hR hin = AccMath.accVec (rowF fl tab (wL L).val (2 * t1.val + 1) (2 * k.val + 1)) (offF fl (wL L).val (2 * t1.val + 1) (2 * k.val + 1)) 0 36 := by
      rw [show pair1_last.sl.v1783_5 d L tab k r g1 g2 hR hin = addf (pair1_last.sl.v1747_5 d L tab k r g1 g2 hR hin) (pair1_last.sl.v1782_5 d L tab k r g1 g2 hR hin) from rfl, a_v1747_5]
      exact acc_step d L fl tab (wL L).val (2 * t1.val + 1) (2 * k.val + 1) 1 _ hRB ⟨35, by decide⟩ ⟨0, by decide⟩ _ rfl _ hw_v1775_5 _ (k1_off96_form ..) _ _
    have a_v1819_5 : pair1_last.sl.v1819_5 d L tab k r g1 g2 hR hin = AccMath.accVec (rowF fl tab (wL L).val (2 * t1.val + 1) (2 * k.val + 1)) (offF fl (wL L).val (2 * t1.val + 1) (2 * k.val + 1)) 0 37 := by
      rw [show pair1_last.sl.v1819_5 d L tab k r g1 g2 hR hin = addf (pair1_last.sl.v1783_5 d L tab k r g1 g2 hR hin) (pair1_last.sl.v1818_5 d L tab k r g1 g2 hR hin) from rfl, a_v1783_5]
      exact acc_step d L fl tab (wL L).val (2 * t1.val + 1) (2 * k.val + 1) 1 _ hRB ⟨36, by decide⟩ ⟨0, by decide⟩ _ rfl _ hw_v1811_5 _ (k1_off97_form ..) _ _
    have a_v1855_5 : pair1_last.sl.v1855_5 d L tab k r g1 g2 hR hin = AccMath.accVec (rowF fl tab (wL L).val (2 * t1.val + 1) (2 * k.val + 1)) (offF fl (wL L).val (2 * t1.val + 1) (2 * k.val + 1)) 0 38 := by
      rw [show pair1_last.sl.v1855_5 d L tab k r g1 g2 hR hin = addf (pair1_last.sl.v1819_5 d L tab k r g1 g2 hR hin) (pair1_last.sl.v1854_5 d L tab k r g1 g2 hR hin) from rfl, a_v1819_5]
      exact acc_step d L fl tab (wL L).val (2 * t1.val + 1) (2 * k.val + 1) 1 _ hRB ⟨37, by decide⟩ ⟨0, by decide⟩ _ rfl _ hw_v1847_5 _ (k1_off98_form ..) _ _
    have a_v1891_5 : pair1_last.sl.v1891_5 d L tab k r g1 g2 hR hin = AccMath.accVec (rowF fl tab (wL L).val (2 * t1.val + 1) (2 * k.val + 1)) (offF fl (wL L).val (2 * t1.val + 1) (2 * k.val + 1)) 0 39 := by
      rw [show pair1_last.sl.v1891_5 d L tab k r g1 g2 hR hin = addf (pair1_last.sl.v1855_5 d L tab k r g1 g2 hR hin) (pair1_last.sl.v1890_5 d L tab k r g1 g2 hR hin) from rfl, a_v1855_5]
      exact acc_step d L fl tab (wL L).val (2 * t1.val + 1) (2 * k.val + 1) 1 _ hRB ⟨38, by decide⟩ ⟨0, by decide⟩ _ rfl _ hw_v1883_5 _ (k1_off99_form ..) _ _
    have a_v1927_5 : pair1_last.sl.v1927_5 d L tab k r g1 g2 hR hin = AccMath.accVec (rowF fl tab (wL L).val (2 * t1.val + 1) (2 * k.val + 1)) (offF fl (wL L).val (2 * t1.val + 1) (2 * k.val + 1)) 0 40 := by
      rw [show pair1_last.sl.v1927_5 d L tab k r g1 g2 hR hin = addf (pair1_last.sl.v1891_5 d L tab k r g1 g2 hR hin) (pair1_last.sl.v1926_5 d L tab k r g1 g2 hR hin) from rfl, a_v1891_5]
      exact acc_step d L fl tab (wL L).val (2 * t1.val + 1) (2 * k.val + 1) 1 _ hRB ⟨39, by decide⟩ ⟨0, by decide⟩ _ rfl _ hw_v1919_5 _ (k1_off100_form ..) _ _
    have a_v1963_5 : pair1_last.sl.v1963_5 d L tab k r g1 g2 hR hin = AccMath.accVec (rowF fl tab (wL L).val (2 * t1.val + 1) (2 * k.val + 1)) (offF fl (wL L).val (2 * t1.val + 1) (2 * k.val + 1)) 0 41 := by
      rw [show pair1_last.sl.v1963_5 d L tab k r g1 g2 hR hin = addf (pair1_last.sl.v1927_5 d L tab k r g1 g2 hR hin) (pair1_last.sl.v1962_5 d L tab k r g1 g2 hR hin) from rfl, a_v1927_5]
      exact acc_step d L fl tab (wL L).val (2 * t1.val + 1) (2 * k.val + 1) 1 _ hRB ⟨40, by decide⟩ ⟨0, by decide⟩ _ rfl _ hw_v1955_5 _ (k1_off101_form ..) _ _
    have a_v1999_5 : pair1_last.sl.v1999_5 d L tab k r g1 g2 hR hin = AccMath.accVec (rowF fl tab (wL L).val (2 * t1.val + 1) (2 * k.val + 1)) (offF fl (wL L).val (2 * t1.val + 1) (2 * k.val + 1)) 0 42 := by
      rw [show pair1_last.sl.v1999_5 d L tab k r g1 g2 hR hin = addf (pair1_last.sl.v1963_5 d L tab k r g1 g2 hR hin) (pair1_last.sl.v1998_5 d L tab k r g1 g2 hR hin) from rfl, a_v1963_5]
      exact acc_step d L fl tab (wL L).val (2 * t1.val + 1) (2 * k.val + 1) 1 _ hRB ⟨41, by decide⟩ ⟨0, by decide⟩ _ rfl _ hw_v1991_5 _ (k1_off102_form ..) _ _
    have a_v2035_5 : pair1_last.sl.v2035_5 d L tab k r g1 g2 hR hin = AccMath.accVec (rowF fl tab (wL L).val (2 * t1.val + 1) (2 * k.val + 1)) (offF fl (wL L).val (2 * t1.val + 1) (2 * k.val + 1)) 0 43 := by
      rw [show pair1_last.sl.v2035_5 d L tab k r g1 g2 hR hin = addf (pair1_last.sl.v1999_5 d L tab k r g1 g2 hR hin) (pair1_last.sl.v2034_5 d L tab k r g1 g2 hR hin) from rfl, a_v1999_5]
      exact acc_step d L fl tab (wL L).val (2 * t1.val + 1) (2 * k.val + 1) 1 _ hRB ⟨42, by decide⟩ ⟨0, by decide⟩ _ rfl _ hw_v2027_5 _ (k1_off103_form ..) _ _
    have a_v2071_5 : pair1_last.sl.v2071_5 d L tab k r g1 g2 hR hin = AccMath.accVec (rowF fl tab (wL L).val (2 * t1.val + 1) (2 * k.val + 1)) (offF fl (wL L).val (2 * t1.val + 1) (2 * k.val + 1)) 0 44 := by
      rw [show pair1_last.sl.v2071_5 d L tab k r g1 g2 hR hin = addf (pair1_last.sl.v2035_5 d L tab k r g1 g2 hR hin) (pair1_last.sl.v2070_5 d L tab k r g1 g2 hR hin) from rfl, a_v2035_5]
      exact acc_step d L fl tab (wL L).val (2 * t1.val + 1) (2 * k.val + 1) 1 _ hRB ⟨43, by decide⟩ ⟨0, by decide⟩ _ rfl _ hw_v2063_5 _ (k1_off104_form ..) _ _
    have a_v2107_5 : pair1_last.sl.v2107_5 d L tab k r g1 g2 hR hin = AccMath.accVec (rowF fl tab (wL L).val (2 * t1.val + 1) (2 * k.val + 1)) (offF fl (wL L).val (2 * t1.val + 1) (2 * k.val + 1)) 0 45 := by
      rw [show pair1_last.sl.v2107_5 d L tab k r g1 g2 hR hin = addf (pair1_last.sl.v2071_5 d L tab k r g1 g2 hR hin) (pair1_last.sl.v2106_5 d L tab k r g1 g2 hR hin) from rfl, a_v2071_5]
      exact acc_step d L fl tab (wL L).val (2 * t1.val + 1) (2 * k.val + 1) 1 _ hRB ⟨44, by decide⟩ ⟨0, by decide⟩ _ rfl _ hw_v2099_5 _ (k1_off105_form ..) _ _
    have a_v2143_5 : pair1_last.sl.v2143_5 d L tab k r g1 g2 hR hin = AccMath.accVec (rowF fl tab (wL L).val (2 * t1.val + 1) (2 * k.val + 1)) (offF fl (wL L).val (2 * t1.val + 1) (2 * k.val + 1)) 0 46 := by
      rw [show pair1_last.sl.v2143_5 d L tab k r g1 g2 hR hin = addf (pair1_last.sl.v2107_5 d L tab k r g1 g2 hR hin) (pair1_last.sl.v2142_5 d L tab k r g1 g2 hR hin) from rfl, a_v2107_5]
      exact acc_step d L fl tab (wL L).val (2 * t1.val + 1) (2 * k.val + 1) 1 _ hRB ⟨45, by decide⟩ ⟨0, by decide⟩ _ rfl _ hw_v2135_5 _ (k1_off106_form ..) _ _
    have a_v2179_5 : pair1_last.sl.v2179_5 d L tab k r g1 g2 hR hin = AccMath.accVec (rowF fl tab (wL L).val (2 * t1.val + 1) (2 * k.val + 1)) (offF fl (wL L).val (2 * t1.val + 1) (2 * k.val + 1)) 0 47 := by
      rw [show pair1_last.sl.v2179_5 d L tab k r g1 g2 hR hin = addf (pair1_last.sl.v2143_5 d L tab k r g1 g2 hR hin) (pair1_last.sl.v2178_5 d L tab k r g1 g2 hR hin) from rfl, a_v2143_5]
      exact acc_step d L fl tab (wL L).val (2 * t1.val + 1) (2 * k.val + 1) 1 _ hRB ⟨46, by decide⟩ ⟨0, by decide⟩ _ rfl _ hw_v2171_5 _ (k1_off107_form ..) _ _
    have a_v2215_5 : pair1_last.sl.v2215_5 d L tab k r g1 g2 hR hin = AccMath.accVec (rowF fl tab (wL L).val (2 * t1.val + 1) (2 * k.val + 1)) (offF fl (wL L).val (2 * t1.val + 1) (2 * k.val + 1)) 0 48 := by
      rw [show pair1_last.sl.v2215_5 d L tab k r g1 g2 hR hin = addf (pair1_last.sl.v2179_5 d L tab k r g1 g2 hR hin) (pair1_last.sl.v2214_5 d L tab k r g1 g2 hR hin) from rfl, a_v2179_5]
      exact acc_step d L fl tab (wL L).val (2 * t1.val + 1) (2 * k.val + 1) 1 _ hRB ⟨47, by decide⟩ ⟨0, by decide⟩ _ rfl _ hw_v2207_5 _ (k1_off108_form ..) _ _
    have a_v1580 : pair1_last.sl.v1580 d L tab k r g1 g2 hR hin = AccMath.accVec (rowF fl tab (wL L).val (2 * t1.val + 1) (2 * k.val + 1)) (offF fl (wL L).val (2 * t1.val + 1) (2 * k.val + 1)) 0 49 := by
      rw [show pair1_last.sl.v1580 d L tab k r g1 g2 hR hin = addf (pair1_last.sl.v2215_5 d L tab k r g1 g2 hR hin) (pair1_last.sl.v1579 d L tab k r g1 g2 hR hin) from rfl, a_v2215_5]
      exact acc_step d L fl tab (wL L).val (2 * t1.val + 1) (2 * k.val + 1) 1 _ hRB ⟨48, by decide⟩ ⟨0, by decide⟩ _ rfl _ hw_v1572 _ (k1_off110_form ..) _ _
    have a_v1614 : pair1_last.sl.v1614 d L tab k r g1 g2 hR hin = AccMath.accVec (rowF fl tab (wL L).val (2 * t1.val + 1) (2 * k.val + 1)) (offF fl (wL L).val (2 * t1.val + 1) (2 * k.val + 1)) 0 50 := by
      rw [show pair1_last.sl.v1614 d L tab k r g1 g2 hR hin = addf (pair1_last.sl.v1580 d L tab k r g1 g2 hR hin) (pair1_last.sl.v1613 d L tab k r g1 g2 hR hin) from rfl, a_v1580]
      exact acc_step d L fl tab (wL L).val (2 * t1.val + 1) (2 * k.val + 1) 1 _ hRB ⟨49, by decide⟩ ⟨0, by decide⟩ _ rfl _ hw_v1606 _ (k1_off111_form ..) _ _
    have a_v1561_B1 : pair1_last.sl.v1561 = AccMath.accVec (rowF fl tab (wL L).val (2 * t1.val + 1) (2 * k.val + 1)) (offF fl (wL L).val (2 * t1.val + 1) (2 * k.val + 1)) 1 0 := acc_zero fl tab (wL L).val (2 * t1.val + 1) (2 * k.val + 1) 1
    have a_v1683_3 : pair1_last.sl.v1683_3 d L tab k r g1 g2 hR hin = AccMath.accVec (rowF fl tab (wL L).val (2 * t1.val + 1) (2 * k.val + 1)) (offF fl (wL L).val (2 * t1.val + 1) (2 * k.val + 1)) 1 1 := by
      rw [show pair1_last.sl.v1683_3 d L tab k r g1 g2 hR hin = addf (pair1_last.sl.v1561) (pair1_last.sl.v1682_3 d L tab k r g1 g2 hR hin) from rfl, a_v1561_B1]
      exact acc_step d L fl tab (wL L).val (2 * t1.val + 1) (2 * k.val + 1) 1 _ hRB ⟨0, by decide⟩ ⟨1, by decide⟩ _ rfl _ hw_v1667_3 _ (k1_off93_form ..) _ _
    have a_v1719_3 : pair1_last.sl.v1719_3 d L tab k r g1 g2 hR hin = AccMath.accVec (rowF fl tab (wL L).val (2 * t1.val + 1) (2 * k.val + 1)) (offF fl (wL L).val (2 * t1.val + 1) (2 * k.val + 1)) 1 2 := by
      rw [show pair1_last.sl.v1719_3 d L tab k r g1 g2 hR hin = addf (pair1_last.sl.v1683_3 d L tab k r g1 g2 hR hin) (pair1_last.sl.v1718_3 d L tab k r g1 g2 hR hin) from rfl, a_v1683_3]
      exact acc_step d L fl tab (wL L).val (2 * t1.val + 1) (2 * k.val + 1) 1 _ hRB ⟨1, by decide⟩ ⟨1, by decide⟩ _ rfl _ hw_v1703_3 _ (k1_off94_form ..) _ _
    have a_v1755_3 : pair1_last.sl.v1755_3 d L tab k r g1 g2 hR hin = AccMath.accVec (rowF fl tab (wL L).val (2 * t1.val + 1) (2 * k.val + 1)) (offF fl (wL L).val (2 * t1.val + 1) (2 * k.val + 1)) 1 3 := by
      rw [show pair1_last.sl.v1755_3 d L tab k r g1 g2 hR hin = addf (pair1_last.sl.v1719_3 d L tab k r g1 g2 hR hin) (pair1_last.sl.v1754_3 d L tab k r g1 g2 hR hin) from rfl, a_v1719_3]
      exact acc_step d L fl tab (wL L).val (2 * t1.val + 1) (2 * k.val + 1) 1 _ hRB ⟨2, by decide⟩ ⟨1, by decide⟩ _ rfl _ hw_v1739_3 _ (k1_off95_form ..) _ _
    have a_v1791_3 : pair1_last.sl.v1791_3 d L tab k r g1 g2 hR hin = AccMath.accVec (rowF fl tab (wL L).val (2 * t1.val + 1) (2 * k.val + 1)) (offF fl (wL L).val (2 * t1.val + 1) (2 * k.val + 1)) 1 4 := by
      rw [show pair1_last.sl.v1791_3 d L tab k r g1 g2 hR hin = addf (pair1_last.sl.v1755_3 d L tab k r g1 g2 hR hin) (pair1_last.sl.v1790_3 d L tab k r g1 g2 hR hin) from rfl, a_v1755_3]
      exact acc_step d L fl tab (wL L).val (2 * t1.val + 1) (2 * k.val + 1) 1 _ hRB ⟨3, by decide⟩ ⟨1, by decide⟩ _ rfl _ hw_v1775_3 _ (k1_off96_form ..) _ _
    have a_v1827_3 : pair1_last.sl.v1827_3 d L tab k r g1 g2 hR hin = AccMath.accVec (rowF fl tab (wL L).val (2 * t1.val + 1) (2 * k.val + 1)) (offF fl (wL L).val (2 * t1.val + 1) (2 * k.val + 1)) 1 5 := by
      rw [show pair1_last.sl.v1827_3 d L tab k r g1 g2 hR hin = addf (pair1_last.sl.v1791_3 d L tab k r g1 g2 hR hin) (pair1_last.sl.v1826_3 d L tab k r g1 g2 hR hin) from rfl, a_v1791_3]
      exact acc_step d L fl tab (wL L).val (2 * t1.val + 1) (2 * k.val + 1) 1 _ hRB ⟨4, by decide⟩ ⟨1, by decide⟩ _ rfl _ hw_v1811_3 _ (k1_off97_form ..) _ _
    have a_v1863_3 : pair1_last.sl.v1863_3 d L tab k r g1 g2 hR hin = AccMath.accVec (rowF fl tab (wL L).val (2 * t1.val + 1) (2 * k.val + 1)) (offF fl (wL L).val (2 * t1.val + 1) (2 * k.val + 1)) 1 6 := by
      rw [show pair1_last.sl.v1863_3 d L tab k r g1 g2 hR hin = addf (pair1_last.sl.v1827_3 d L tab k r g1 g2 hR hin) (pair1_last.sl.v1862_3 d L tab k r g1 g2 hR hin) from rfl, a_v1827_3]
      exact acc_step d L fl tab (wL L).val (2 * t1.val + 1) (2 * k.val + 1) 1 _ hRB ⟨5, by decide⟩ ⟨1, by decide⟩ _ rfl _ hw_v1847_3 _ (k1_off98_form ..) _ _
    have a_v1899_3 : pair1_last.sl.v1899_3 d L tab k r g1 g2 hR hin = AccMath.accVec (rowF fl tab (wL L).val (2 * t1.val + 1) (2 * k.val + 1)) (offF fl (wL L).val (2 * t1.val + 1) (2 * k.val + 1)) 1 7 := by
      rw [show pair1_last.sl.v1899_3 d L tab k r g1 g2 hR hin = addf (pair1_last.sl.v1863_3 d L tab k r g1 g2 hR hin) (pair1_last.sl.v1898_3 d L tab k r g1 g2 hR hin) from rfl, a_v1863_3]
      exact acc_step d L fl tab (wL L).val (2 * t1.val + 1) (2 * k.val + 1) 1 _ hRB ⟨6, by decide⟩ ⟨1, by decide⟩ _ rfl _ hw_v1883_3 _ (k1_off99_form ..) _ _
    have a_v1935_3 : pair1_last.sl.v1935_3 d L tab k r g1 g2 hR hin = AccMath.accVec (rowF fl tab (wL L).val (2 * t1.val + 1) (2 * k.val + 1)) (offF fl (wL L).val (2 * t1.val + 1) (2 * k.val + 1)) 1 8 := by
      rw [show pair1_last.sl.v1935_3 d L tab k r g1 g2 hR hin = addf (pair1_last.sl.v1899_3 d L tab k r g1 g2 hR hin) (pair1_last.sl.v1934_3 d L tab k r g1 g2 hR hin) from rfl, a_v1899_3]
      exact acc_step d L fl tab (wL L).val (2 * t1.val + 1) (2 * k.val + 1) 1 _ hRB ⟨7, by decide⟩ ⟨1, by decide⟩ _ rfl _ hw_v1919_3 _ (k1_off100_form ..) _ _
    have a_v1971_3 : pair1_last.sl.v1971_3 d L tab k r g1 g2 hR hin = AccMath.accVec (rowF fl tab (wL L).val (2 * t1.val + 1) (2 * k.val + 1)) (offF fl (wL L).val (2 * t1.val + 1) (2 * k.val + 1)) 1 9 := by
      rw [show pair1_last.sl.v1971_3 d L tab k r g1 g2 hR hin = addf (pair1_last.sl.v1935_3 d L tab k r g1 g2 hR hin) (pair1_last.sl.v1970_3 d L tab k r g1 g2 hR hin) from rfl, a_v1935_3]
      exact acc_step d L fl tab (wL L).val (2 * t1.val + 1) (2 * k.val + 1) 1 _ hRB ⟨8, by decide⟩ ⟨1, by decide⟩ _ rfl _ hw_v1955_3 _ (k1_off101_form ..) _ _
    have a_v2007_3 : pair1_last.sl.v2007_3 d L tab k r g1 g2 hR hin = AccMath.accVec (rowF fl tab (wL L).val (2 * t1.val + 1) (2 * k.val + 1)) (offF fl (wL L).val (2 * t1.val + 1) (2 * k.val + 1)) 1 10 := by
      rw [show pair1_last.sl.v2007_3 d L tab k r g1 g2 hR hin = addf (pair1_last.sl.v1971_3 d L tab k r g1 g2 hR hin) (pair1_last.sl.v2006_3 d L tab k r g1 g2 hR hin) from rfl, a_v1971_3]
      exact acc_step d L fl tab (wL L).val (2 * t1.val + 1) (2 * k.val + 1) 1 _ hRB ⟨9, by decide⟩ ⟨1, by decide⟩ _ rfl _ hw_v1991_3 _ (k1_off102_form ..) _ _
    have a_v2043_3 : pair1_last.sl.v2043_3 d L tab k r g1 g2 hR hin = AccMath.accVec (rowF fl tab (wL L).val (2 * t1.val + 1) (2 * k.val + 1)) (offF fl (wL L).val (2 * t1.val + 1) (2 * k.val + 1)) 1 11 := by
      rw [show pair1_last.sl.v2043_3 d L tab k r g1 g2 hR hin = addf (pair1_last.sl.v2007_3 d L tab k r g1 g2 hR hin) (pair1_last.sl.v2042_3 d L tab k r g1 g2 hR hin) from rfl, a_v2007_3]
      exact acc_step d L fl tab (wL L).val (2 * t1.val + 1) (2 * k.val + 1) 1 _ hRB ⟨10, by decide⟩ ⟨1, by decide⟩ _ rfl _ hw_v2027_3 _ (k1_off103_form ..) _ _
    have a_v2079_3 : pair1_last.sl.v2079_3 d L tab k r g1 g2 hR hin = AccMath.accVec (rowF fl tab (wL L).val (2 * t1.val + 1) (2 * k.val + 1)) (offF fl (wL L).val (2 * t1.val + 1) (2 * k.val + 1)) 1 12 := by
      rw [show pair1_last.sl.v2079_3 d L tab k r g1 g2 hR hin = addf (pair1_last.sl.v2043_3 d L tab k r g1 g2 hR hin) (pair1_last.sl.v2078_3 d L tab k r g1 g2 hR hin) from rfl, a_v2043_3]
      exact acc_step d L fl tab (wL L).val (2 * t1.val + 1) (2 * k.val + 1) 1 _ hRB ⟨11, by decide⟩ ⟨1, by decide⟩ _ rfl _ hw_v2063_3 _ (k1_off104_form ..) _ _
    have a_v2115_3 : pair1_last.sl.v2115_3 d L tab k r g1 g2 hR hin = AccMath.accVec (rowF fl tab (wL L).val (2 * t1.val + 1) (2 * k.val + 1)) (offF fl (wL L).val (2 * t1.val + 1) (2 * k.val + 1)) 1 13 := by
      rw [show pair1_last.sl.v2115_3 d L tab k r g1 g2 hR hin = addf (pair1_last.sl.v2079_3 d L tab k r g1 g2 hR hin) (pair1_last.sl.v2114_3 d L tab k r g1 g2 hR hin) from rfl, a_v2079_3]
      exact acc_step d L fl tab (wL L).val (2 * t1.val + 1) (2 * k.val + 1) 1 _ hRB ⟨12, by decide⟩ ⟨1, by decide⟩ _ rfl _ hw_v2099_3 _ (k1_off105_form ..) _ _
    have a_v2151_3 : pair1_last.sl.v2151_3 d L tab k r g1 g2 hR hin = AccMath.accVec (rowF fl tab (wL L).val (2 * t1.val + 1) (2 * k.val + 1)) (offF fl (wL L).val (2 * t1.val + 1) (2 * k.val + 1)) 1 14 := by
      rw [show pair1_last.sl.v2151_3 d L tab k r g1 g2 hR hin = addf (pair1_last.sl.v2115_3 d L tab k r g1 g2 hR hin) (pair1_last.sl.v2150_3 d L tab k r g1 g2 hR hin) from rfl, a_v2115_3]
      exact acc_step d L fl tab (wL L).val (2 * t1.val + 1) (2 * k.val + 1) 1 _ hRB ⟨13, by decide⟩ ⟨1, by decide⟩ _ rfl _ hw_v2135_3 _ (k1_off106_form ..) _ _
    have a_v2187_3 : pair1_last.sl.v2187_3 d L tab k r g1 g2 hR hin = AccMath.accVec (rowF fl tab (wL L).val (2 * t1.val + 1) (2 * k.val + 1)) (offF fl (wL L).val (2 * t1.val + 1) (2 * k.val + 1)) 1 15 := by
      rw [show pair1_last.sl.v2187_3 d L tab k r g1 g2 hR hin = addf (pair1_last.sl.v2151_3 d L tab k r g1 g2 hR hin) (pair1_last.sl.v2186_3 d L tab k r g1 g2 hR hin) from rfl, a_v2151_3]
      exact acc_step d L fl tab (wL L).val (2 * t1.val + 1) (2 * k.val + 1) 1 _ hRB ⟨14, by decide⟩ ⟨1, by decide⟩ _ rfl _ hw_v2171_3 _ (k1_off107_form ..) _ _
    have a_v2223_3 : pair1_last.sl.v2223_3 d L tab k r g1 g2 hR hin = AccMath.accVec (rowF fl tab (wL L).val (2 * t1.val + 1) (2 * k.val + 1)) (offF fl (wL L).val (2 * t1.val + 1) (2 * k.val + 1)) 1 16 := by
      rw [show pair1_last.sl.v2223_3 d L tab k r g1 g2 hR hin = addf (pair1_last.sl.v2187_3 d L tab k r g1 g2 hR hin) (pair1_last.sl.v2222_3 d L tab k r g1 g2 hR hin) from rfl, a_v2187_3]
      exact acc_step d L fl tab (wL L).val (2 * t1.val + 1) (2 * k.val + 1) 1 _ hRB ⟨15, by decide⟩ ⟨1, by decide⟩ _ rfl _ hw_v2207_3 _ (k1_off108_form ..) _ _
    have a_v1683_4 : pair1_last.sl.v1683_4 d L tab k r g1 g2 hR hin = AccMath.accVec (rowF fl tab (wL L).val (2 * t1.val + 1) (2 * k.val + 1)) (offF fl (wL L).val (2 * t1.val + 1) (2 * k.val + 1)) 1 17 := by
      rw [show pair1_last.sl.v1683_4 d L tab k r g1 g2 hR hin = addf (pair1_last.sl.v2223_3 d L tab k r g1 g2 hR hin) (pair1_last.sl.v1682_4 d L tab k r g1 g2 hR hin) from rfl, a_v2223_3]
      exact acc_step d L fl tab (wL L).val (2 * t1.val + 1) (2 * k.val + 1) 1 _ hRB ⟨16, by decide⟩ ⟨1, by decide⟩ _ rfl _ hw_v1667_4 _ (k1_off93_form ..) _ _
    have a_v1719_4 : pair1_last.sl.v1719_4 d L tab k r g1 g2 hR hin = AccMath.accVec (rowF fl tab (wL L).val (2 * t1.val + 1) (2 * k.val + 1)) (offF fl (wL L).val (2 * t1.val + 1) (2 * k.val + 1)) 1 18 := by
      rw [show pair1_last.sl.v1719_4 d L tab k r g1 g2 hR hin = addf (pair1_last.sl.v1683_4 d L tab k r g1 g2 hR hin) (pair1_last.sl.v1718_4 d L tab k r g1 g2 hR hin) from rfl, a_v1683_4]
      exact acc_step d L fl tab (wL L).val (2 * t1.val + 1) (2 * k.val + 1) 1 _ hRB ⟨17, by decide⟩ ⟨1, by decide⟩ _ rfl _ hw_v1703_4 _ (k1_off94_form ..) _ _
    have a_v1755_4 : pair1_last.sl.v1755_4 d L tab k r g1 g2 hR hin = AccMath.accVec (rowF fl tab (wL L).val (2 * t1.val + 1) (2 * k.val + 1)) (offF fl (wL L).val (2 * t1.val + 1) (2 * k.val + 1)) 1 19 := by
      rw [show pair1_last.sl.v1755_4 d L tab k r g1 g2 hR hin = addf (pair1_last.sl.v1719_4 d L tab k r g1 g2 hR hin) (pair1_last.sl.v1754_4 d L tab k r g1 g2 hR hin) from rfl, a_v1719_4]
      exact acc_step d L fl tab (wL L).val (2 * t1.val + 1) (2 * k.val + 1) 1 _ hRB ⟨18, by decide⟩ ⟨1, by decide⟩ _ rfl _ hw_v1739_4 _ (k1_off95_form ..) _ _
    have a_v1791_4 : pair1_last.sl.v1791_4 d L tab k r g1 g2 hR hin = AccMath.accVec (rowF fl tab (wL L).val (2 * t1.val + 1) (2 * k.val + 1)) (offF fl (wL L).val (2 * t1.val + 1) (2 * k.val + 1)) 1 20 := by
      rw [show pair1_last.sl.v1791_4 d L tab k r g1 g2 hR hin = addf (pair1_last.sl.v1755_4 d L tab k r g1 g2 hR hin) (pair1_last.sl.v1790_4 d L tab k r g1 g2 hR hin) from rfl, a_v1755_4]
      exact acc_step d L fl tab (wL L).val (2 * t1.val + 1) (2 * k.val + 1) 1 _ hRB ⟨19, by decide⟩ ⟨1, by decide⟩ _ rfl _ hw_v1775_4 _ (k1_off96_form ..) _ _
    have a_v1827_4 : pair1_last.sl.v1827_4 d L tab k r g1 g2 hR hin = AccMath.accVec (rowF fl tab (wL L).val (2 * t1.val + 1) (2 * k.val + 1)) (offF fl (wL L).val (2 * t1.val + 1) (2 * k.val + 1)) 1 21 := by
      rw [show pair1_last.sl.v1827_4 d L tab k r g1 g2 hR hin = addf (pair1_last.sl.v1791_4 d L tab k r g1 g2 hR hin) (pair1_last.sl.v1826_4 d L tab k r g1 g2 hR hin) from rfl, a_v1791_4]
      exact acc_step d L fl tab (wL L).val (2 * t1.val + 1) (2 * k.val + 1) 1 _ hRB ⟨20, by decide⟩ ⟨1, by decide⟩ _ rfl _ hw_v1811_4 _ (k1_off97_form ..) _ _
    have a_v1863_4 : pair1_last.sl.v1863_4 d L tab k r g1 g2 hR hin = AccMath.accVec (rowF fl tab (wL L).val (2 * t1.val + 1) (2 * k.val + 1)) (offF fl (wL L).val (2 * t1.val + 1) (2 * k.val + 1)) 1 22 := by
      rw [show pair1_last.sl.v1863_4 d L tab k r g1 g2 hR hin = addf (pair1_last.sl.v1827_4 d L tab k r g1 g2 hR hin) (pair1_last.sl.v1862_4 d L tab k r g1 g2 hR hin) from rfl, a_v1827_4]
      exact acc_step d L fl tab (wL L).val (2 * t1.val + 1) (2 * k.val + 1) 1 _ hRB ⟨21, by decide⟩ ⟨1, by decide⟩ _ rfl _ hw_v1847_4 _ (k1_off98_form ..) _ _
    have a_v1899_4 : pair1_last.sl.v1899_4 d L tab k r g1 g2 hR hin = AccMath.accVec (rowF fl tab (wL L).val (2 * t1.val + 1) (2 * k.val + 1)) (offF fl (wL L).val (2 * t1.val + 1) (2 * k.val + 1)) 1 23 := by
      rw [show pair1_last.sl.v1899_4 d L tab k r g1 g2 hR hin = addf (pair1_last.sl.v1863_4 d L tab k r g1 g2 hR hin) (pair1_last.sl.v1898_4 d L tab k r g1 g2 hR hin) from rfl, a_v1863_4]
      exact acc_step d L fl tab (wL L).val (2 * t1.val + 1) (2 * k.val + 1) 1 _ hRB ⟨22, by decide⟩ ⟨1, by decide⟩ _ rfl _ hw_v1883_4 _ (k1_off99_form ..) _ _
    have a_v1935_4 : pair1_last.sl.v1935_4 d L tab k r g1 g2 hR hin = AccMath.accVec (rowF fl tab (wL L).val (2 * t1.val + 1) (2 * k.val + 1)) (offF fl (wL L).val (2 * t1.val + 1) (2 * k.val + 1)) 1 24 := by
      rw [show pair1_last.sl.v1935_4 d L tab k r g1 g2 hR hin = addf (pair1_last.sl.v1899_4 d L tab k r g1 g2 hR hin) (pair1_last.sl.v1934_4 d L tab k r g1 g2 hR hin) from rfl, a_v1899_4]
      exact acc_step d L fl tab (wL L).val (2 * t1.val + 1) (2 * k.val + 1) 1 _ hRB ⟨23, by decide⟩ ⟨1, by decide⟩ _ rfl _ hw_v1919_4 _ (k1_off100_form ..) _ _
    have a_v1971_4 : pair1_last.sl.v1971_4 d L tab k r g1 g2 hR hin = AccMath.accVec (rowF fl tab (wL L).val (2 * t1.val + 1) (2 * k.val + 1)) (offF fl (wL L).val (2 * t1.val + 1) (2 * k.val + 1)) 1 25 := by
      rw [show pair1_last.sl.v1971_4 d L tab k r g1 g2 hR hin = addf (pair1_last.sl.v1935_4 d L tab k r g1 g2 hR hin) (pair1_last.sl.v1970_4 d L tab k r g1 g2 hR hin) from rfl, a_v1935_4]
      exact acc_step d L fl tab (wL L).val (2 * t1.val + 1) (2 * k.val + 1) 1 _ hRB ⟨24, by decide⟩ ⟨1, by decide⟩ _ rfl _ hw_v1955_4 _ (k1_off101_form ..) _ _
    have a_v2007_4 : pair1_last.sl.v2007_4 d L tab k r g1 g2 hR hin = AccMath.accVec (rowF fl tab (wL L).val (2 * t1.val + 1) (2 * k.val + 1)) (offF fl (wL L).val (2 * t1.val + 1) (2 * k.val + 1)) 1 26 := by
      rw [show pair1_last.sl.v2007_4 d L tab k r g1 g2 hR hin = addf (pair1_last.sl.v1971_4 d L tab k r g1 g2 hR hin) (pair1_last.sl.v2006_4 d L tab k r g1 g2 hR hin) from rfl, a_v1971_4]
      exact acc_step d L fl tab (wL L).val (2 * t1.val + 1) (2 * k.val + 1) 1 _ hRB ⟨25, by decide⟩ ⟨1, by decide⟩ _ rfl _ hw_v1991_4 _ (k1_off102_form ..) _ _
    have a_v2043_4 : pair1_last.sl.v2043_4 d L tab k r g1 g2 hR hin = AccMath.accVec (rowF fl tab (wL L).val (2 * t1.val + 1) (2 * k.val + 1)) (offF fl (wL L).val (2 * t1.val + 1) (2 * k.val + 1)) 1 27 := by
      rw [show pair1_last.sl.v2043_4 d L tab k r g1 g2 hR hin = addf (pair1_last.sl.v2007_4 d L tab k r g1 g2 hR hin) (pair1_last.sl.v2042_4 d L tab k r g1 g2 hR hin) from rfl, a_v2007_4]
      exact acc_step d L fl tab (wL L).val (2 * t1.val + 1) (2 * k.val + 1) 1 _ hRB ⟨26, by decide⟩ ⟨1, by decide⟩ _ rfl _ hw_v2027_4 _ (k1_off103_form ..) _ _
    have a_v2079_4 : pair1_last.sl.v2079_4 d L tab k r g1 g2 hR hin = AccMath.accVec (rowF fl tab (wL L).val (2 * t1.val + 1) (2 * k.val + 1)) (offF fl (wL L).val (2 * t1.val + 1) (2 * k.val + 1)) 1 28 := by
      rw [show pair1_last.sl.v2079_4 d L tab k r g1 g2 hR hin = addf (pair1_last.sl.v2043_4 d L tab k r g1 g2 hR hin) (pair1_last.sl.v2078_4 d L tab k r g1 g2 hR hin) from rfl, a_v2043_4]
      exact acc_step d L fl tab (wL L).val (2 * t1.val + 1) (2 * k.val + 1) 1 _ hRB ⟨27, by decide⟩ ⟨1, by decide⟩ _ rfl _ hw_v2063_4 _ (k1_off104_form ..) _ _
    have a_v2115_4 : pair1_last.sl.v2115_4 d L tab k r g1 g2 hR hin = AccMath.accVec (rowF fl tab (wL L).val (2 * t1.val + 1) (2 * k.val + 1)) (offF fl (wL L).val (2 * t1.val + 1) (2 * k.val + 1)) 1 29 := by
      rw [show pair1_last.sl.v2115_4 d L tab k r g1 g2 hR hin = addf (pair1_last.sl.v2079_4 d L tab k r g1 g2 hR hin) (pair1_last.sl.v2114_4 d L tab k r g1 g2 hR hin) from rfl, a_v2079_4]
      exact acc_step d L fl tab (wL L).val (2 * t1.val + 1) (2 * k.val + 1) 1 _ hRB ⟨28, by decide⟩ ⟨1, by decide⟩ _ rfl _ hw_v2099_4 _ (k1_off105_form ..) _ _
    have a_v2151_4 : pair1_last.sl.v2151_4 d L tab k r g1 g2 hR hin = AccMath.accVec (rowF fl tab (wL L).val (2 * t1.val + 1) (2 * k.val + 1)) (offF fl (wL L).val (2 * t1.val + 1) (2 * k.val + 1)) 1 30 := by
      rw [show pair1_last.sl.v2151_4 d L tab k r g1 g2 hR hin = addf (pair1_last.sl.v2115_4 d L tab k r g1 g2 hR hin) (pair1_last.sl.v2150_4 d L tab k r g1 g2 hR hin) from rfl, a_v2115_4]
      exact acc_step d L fl tab (wL L).val (2 * t1.val + 1) (2 * k.val + 1) 1 _ hRB ⟨29, by decide⟩ ⟨1, by decide⟩ _ rfl _ hw_v2135_4 _ (k1_off106_form ..) _ _
    have a_v2187_4 : pair1_last.sl.v2187_4 d L tab k r g1 g2 hR hin = AccMath.accVec (rowF fl tab (wL L).val (2 * t1.val + 1) (2 * k.val + 1)) (offF fl (wL L).val (2 * t1.val + 1) (2 * k.val + 1)) 1 31 := by
      rw [show pair1_last.sl.v2187_4 d L tab k r g1 g2 hR hin = addf (pair1_last.sl.v2151_4 d L tab k r g1 g2 hR hin) (pair1_last.sl.v2186_4 d L tab k r g1 g2 hR hin) from rfl, a_v2151_4]
      exact acc_step d L fl tab (wL L).val (2 * t1.val + 1) (2 * k.val + 1) 1 _ hRB ⟨30, by decide⟩ ⟨1, by decide⟩ _ rfl _ hw_v2171_4 _ (k1_off107_form ..) _ _
    have a_v2223_4 : pair1_last.sl.v2223_4 d L tab k r g1 g2 hR hin = AccMath.accVec (rowF fl tab (wL L).val (2 * t1.val + 1) (2 * k.val + 1)) (offF fl (wL L).val (2 * t1.val + 1) (2 * k.val + 1)) 1 32 := by
      rw [show pair1_last.sl.v2223_4 d L tab k r g1 g2 hR hin = addf (pair1_last.sl.v2187_4 d L tab k r g1 g2 hR hin) (pair1_last.sl.v2222_4 d L tab k r g1 g2 hR hin) from rfl, a_v2187_4]
      exact acc_step d L fl tab (wL L).val (2 * t1.val + 1) (2 * k.val + 1) 1 _ hRB ⟨31, by decide⟩ ⟨1, by decide⟩ _ rfl _ hw_v2207_4 _ (k1_off108_form ..) _ _
    have a_v1683_5 : pair1_last.sl.v1683_5 d L tab k r g1 g2 hR hin = AccMath.accVec (rowF fl tab (wL L).val (2 * t1.val + 1) (2 * k.val + 1)) (offF fl (wL L).val (2 * t1.val + 1) (2 * k.val + 1)) 1 33 := by
      rw [show pair1_last.sl.v1683_5 d L tab k r g1 g2 hR hin = addf (pair1_last.sl.v2223_4 d L tab k r g1 g2 hR hin) (pair1_last.sl.v1682_5 d L tab k r g1 g2 hR hin) from rfl, a_v2223_4]
      exact acc_step d L fl tab (wL L).val (2 * t1.val + 1) (2 * k.val + 1) 1 _ hRB ⟨32, by decide⟩ ⟨1, by decide⟩ _ rfl _ hw_v1667_5 _ (k1_off93_form ..) _ _
    have a_v1719_5 : pair1_last.sl.v1719_5 d L tab k r g1 g2 hR hin = AccMath.accVec (rowF fl tab (wL L).val (2 * t1.val + 1) (2 * k.val + 1)) (offF fl (wL L).val (2 * t1.val + 1) (2 * k.val + 1)) 1 34 := by
      rw [show pair1_last.sl.v1719_5 d L tab k r g1 g2 hR hin = addf (pair1_last.sl.v1683_5 d L tab k r g1 g2 hR hin) (pair1_last.sl.v1718_5 d L tab k r g1 g2 hR hin) from rfl, a_v1683_5]
      exact acc_step d L fl tab (wL L).val (2 * t1.val + 1) (2 * k.val + 1) 1 _ hRB ⟨33, by decide⟩ ⟨1, by decide⟩ _ rfl _ hw_v1703_5 _ (k1_off94_form ..) _ _
    have a_v1755_5 : pair1_last.sl.v1755_5 d L tab k r g1 g2 hR hin = AccMath.accVec (rowF fl tab (wL L).val (2 * t1.val + 1) (2 * k.val + 1)) (offF fl (wL L).val (2 * t1.val + 1) (2 * k.val + 1)) 1 35 := by
      rw [show pair1_last.sl.v1755_5 d L tab k r g1 g2 hR hin = addf (pair1_last.sl.v1719_5 d L tab k r g1 g2 hR hin) (pair1_last.sl.v1754_5 d L tab k r g1 g2 hR hin) from rfl, a_v1719_5]
      exact acc_step d L fl tab (wL L).val (2 * t1.val + 1) (2 * k.val + 1) 1 _ hRB ⟨34, by decide⟩ ⟨1, by decide⟩ _ rfl _ hw_v1739_5 _ (k1_off95_form ..) _ _
    have a_v1791_5 : pair1_last.sl.v1791_5 d L tab k r g1 g2 hR hin = AccMath.accVec (rowF fl tab (wL L).val (2 * t1.val + 1) (2 * k.val + 1)) (offF fl (wL L).val (2 * t1.val + 1) (2 * k.val + 1)) 1 36 := by
      rw [show pair1_last.sl.v1791_5 d L tab k r g1 g2 hR hin = addf (pair1_last.sl.v1755_5 d L tab k r g1 g2 hR hin) (pair1_last.sl.v1790_5 d L tab k r g1 g2 hR hin) from rfl, a_v1755_5]
      exact acc_step d L fl tab (wL L).val (2 * t1.val + 1) (2 * k.val + 1) 1 _ hRB ⟨35, by decide⟩ ⟨1, by decide⟩ _ rfl _ hw_v1775_5 _ (k1_off96_form ..) _ _
    have a_v1827_5 : pair1_last.sl.v1827_5 d L tab k r g1 g2 hR hin = AccMath.accVec (rowF fl tab (wL L).val (2 * t1.val + 1) (2 * k.val + 1)) (offF fl (wL L).val (2 * t1.val + 1) (2 * k.val + 1)) 1 37 := by
      rw [show pair1_last.sl.v1827_5 d L tab k r g1 g2 hR hin = addf (pair1_last.sl.v1791_5 d L tab k r g1 g2 hR hin) (pair1_last.sl.v1826_5 d L tab k r g1 g2 hR hin) from rfl, a_v1791_5]
      exact acc_step d L fl tab (wL L).val (2 * t1.val + 1) (2 * k.val + 1) 1 _ hRB ⟨36, by decide⟩ ⟨1, by decide⟩ _ rfl _ hw_v1811_5 _ (k1_off97_form ..) _ _
    have a_v1863_5 : pair1_last.sl.v1863_5 d L tab k r g1 g2 hR hin = AccMath.accVec (rowF fl tab (wL L).val (2 * t1.val + 1) (2 * k.val + 1)) (offF fl (wL L).val (2 * t1.val + 1) (2 * k.val + 1)) 1 38 := by
      rw [show pair1_last.sl.v1863_5 d L tab k r g1 g2 hR hin = addf (pair1_last.sl.v1827_5 d L tab k r g1 g2 hR hin) (pair1_last.sl.v1862_5 d L tab k r g1 g2 hR hin) from rfl, a_v1827_5]
      exact acc_step d L fl tab (wL L).val (2 * t1.val + 1) (2 * k.val + 1) 1 _ hRB ⟨37, by decide⟩ ⟨1, by decide⟩ _ rfl _ hw_v1847_5 _ (k1_off98_form ..) _ _
    have a_v1899_5 : pair1_last.sl.v1899_5 d L tab k r g1 g2 hR hin = AccMath.accVec (rowF fl tab (wL L).val (2 * t1.val + 1) (2 * k.val + 1)) (offF fl (wL L).val (2 * t1.val + 1) (2 * k.val + 1)) 1 39 := by
      rw [show pair1_last.sl.v1899_5 d L tab k r g1 g2 hR hin = addf (pair1_last.sl.v1863_5 d L tab k r g1 g2 hR hin) (pair1_last.sl.v1898_5 d L tab k r g1 g2 hR hin) from rfl, a_v1863_5]
      exact acc_step d L fl tab (wL L).val (2 * t1.val + 1) (2 * k.val + 1) 1 _ hRB ⟨38, by decide⟩ ⟨1, by decide⟩ _ rfl _ hw_v1883_5 _ (k1_off99_form ..) _ _
    have a_v1935_5 : pair1_last.sl.v1935_5 d L tab k r g1 g2 hR hin = AccMath.accVec (rowF fl tab (wL L).val (2 * t1.val + 1) (2 * k.val + 1)) (offF fl (wL L).val (2 * t1.val + 1) (2 * k.val + 1)) 1 40 := by
      rw [show pair1_last.sl.v1935_5 d L tab k r g1 g2 hR hin = addf (pair1_last.sl.v1899_5 d L tab k r g1 g2 hR hin) (pair1_last.sl.v1934_5 d L tab k r g1 g2 hR hin) from rfl, a_v1899_5]
      exact acc_step d L fl tab (wL L).val (2 * t1.val + 1) (2 * k.val + 1) 1 _ hRB ⟨39, by decide⟩ ⟨1, by decide⟩ _ rfl _ hw_v1919_5 _ (k1_off100_form ..) _ _
    have a_v1971_5 : pair1_last.sl.v1971_5 d L tab k r g1 g2 hR hin = AccMath.accVec (rowF fl tab (wL L).val (2 * t1.val + 1) (2 * k.val + 1)) (offF fl (wL L).val (2 * t1.val + 1) (2 * k.val + 1)) 1 41 := by
      rw [show pair1_last.sl.v1971_5 d L tab k r g1 g2 hR hin = addf (pair1_last.sl.v1935_5 d L tab k r g1 g2 hR hin) (pair1_last.sl.v1970_5 d L tab k r g1 g2 hR hin) from rfl, a_v1935_5]
      exact acc_step d L fl tab (wL L).val (2 * t1.val + 1) (2 * k.val + 1) 1 _ hRB ⟨40, by decide⟩ ⟨1, by decide⟩ _ rfl _ hw_v1955_5 _ (k1_off101_form ..) _ _
    have a_v2007_5 : pair1_last.sl.v2007_5 d L tab k r g1 g2 hR hin = AccMath.accVec (rowF fl tab (wL L).val (2 * t1.val + 1) (2 * k.val + 1)) (offF fl (wL L).val (2 * t1.val + 1) (2 * k.val + 1)) 1 42 := by
      rw [show pair1_last.sl.v2007_5 d L tab k r g1 g2 hR hin = addf (pair1_last.sl.v1971_5 d L tab k r g1 g2 hR hin) (pair1_last.sl.v2006_5 d L tab k r g1 g2 hR hin) from rfl, a_v1971_5]
      exact acc_step d L fl tab (wL L).val (2 * t1.val + 1) (2 * k.val + 1) 1 _ hRB ⟨41, by decide⟩ ⟨1, by decide⟩ _ rfl _ hw_v1991_5 _ (k1_off102_form ..) _ _
    have a_v2043_5 : pair1_last.sl.v2043_5 d L tab k r g1 g2 hR hin = AccMath.accVec (rowF fl tab (wL L).val (2 * t1.val + 1) (2 * k.val + 1)) (offF fl (wL L).val (2 * t1.val + 1) (2 * k.val + 1)) 1 43 := by
      rw [show pair1_last.sl.v2043_5 d L tab k r g1 g2 hR hin = addf (pair1_last.sl.v2007_5 d L tab k r g1 g2 hR hin) (pair1_last.sl.v2042_5 d L tab k r g1 g2 hR hin) from rfl, a_v2007_5]
      exact acc_step d L fl tab (wL L).val (2 * t1.val + 1) (2 * k.val + 1) 1 _ hRB ⟨42, by decide⟩ ⟨1, by decide⟩ _ rfl _ hw_v2027_5 _ (k1_off103_form ..) _ _
    have a_v2079_5 : pair1_last.sl.v2079_5 d L tab k r g1 g2 hR hin = AccMath.accVec (rowF fl tab (wL L).val (2 * t1.val + 1) (2 * k.val + 1)) (offF fl (wL L).val (2 * t1.val + 1) (2 * k.val + 1)) 1 44 := by
      rw [show pair1_last.sl.v2079_5 d L tab k r g1 g2 hR hin = addf (pair1_last.sl.v2043_5 d L tab k r g1 g2 hR hin) (pair1_last.sl.v2078_5 d L tab k r g1 g2 hR hin) from rfl, a_v2043_5]
      exact acc_step d L fl tab (wL L).val (2 * t1.val + 1) (2 * k.val + 1) 1 _ hRB ⟨43, by decide⟩ ⟨1, by decide⟩ _ rfl _ hw_v2063_5 _ (k1_off104_form ..) _ _
    have a_v2115_5 : pair1_last.sl.v2115_5 d L tab k r g1 g2 hR hin = AccMath.accVec (rowF fl tab (wL L).val (2 * t1.val + 1) (2 * k.val + 1)) (offF fl (wL L).val (2 * t1.val + 1) (2 * k.val + 1)) 1 45 := by
      rw [show pair1_last.sl.v2115_5 d L tab k r g1 g2 hR hin = addf (pair1_last.sl.v2079_5 d L tab k r g1 g2 hR hin) (pair1_last.sl.v2114_5 d L tab k r g1 g2 hR hin) from rfl, a_v2079_5]
      exact acc_step d L fl tab (wL L).val (2 * t1.val + 1) (2 * k.val + 1) 1 _ hRB ⟨44, by decide⟩ ⟨1, by decide⟩ _ rfl _ hw_v2099_5 _ (k1_off105_form ..) _ _
    have a_v2151_5 : pair1_last.sl.v2151_5 d L tab k r g1 g2 hR hin = AccMath.accVec (rowF fl tab (wL L).val (2 * t1.val + 1) (2 * k.val + 1)) (offF fl (wL L).val (2 * t1.val + 1) (2 * k.val + 1)) 1 46 := by
      rw [show pair1_last.sl.v2151_5 d L tab k r g1 g2 hR hin = addf (pair1_last.sl.v2115_5 d L tab k r g1 g2 hR hin) (pair1_last.sl.v2150_5 d L tab k r g1 g2 hR hin) from rfl, a_v2115_5]
      exact acc_step d L fl tab (wL L).val (2 * t1.val + 1) (2 * k.val + 1) 1 _ hRB ⟨45, by decide⟩ ⟨1, by decide⟩ _ rfl _ hw_v2135_5 _ (k1_off106_form ..) _ _
    have a_v2187_5 : pair1_last.sl.v2187_5 d L tab k r g1 g2 hR hin = AccMath.accVec (rowF fl tab (wL L).val (2 * t1.val + 1) (2 * k.val + 1)) (offF fl (wL L).val (2 * t1.val + 1) (2 * k.val + 1)) 1 47 := by
      rw [show pair1_last.sl.v2187_5 d L tab k r g1 g2 hR hin = addf (pair1_last.sl.v2151_5 d L tab k r g1 g2 hR hin) (pair1_last.sl.v2186_5 d L tab k r g1 g2 hR hin) from rfl, a_v2151_5]
      exact acc_step d L fl tab (wL L).val (2 * t1.val + 1) (2 * k.val + 1) 1 _ hRB ⟨46, by decide⟩ ⟨1, by decide⟩ _ rfl _ hw_v2171_5 _ (k1_off107_form ..) _ _
    have a_v2223_5 : pair1_last.sl.v2223_5 d L tab k r g1 g2 hR hin = AccMath.accVec (rowF fl tab (wL L).val (2 * t1.val + 1) (2 * k.val + 1)) (offF fl (wL L).val (2 * t1.val + 1) (2 * k.val + 1)) 1 48 := by
      rw [show pair1_last.sl.v2223_5 d L tab k r g1 g2 hR hin = addf (pair1_last.sl.v2187_5 d L tab k r g1 g2 hR hin) (pair1_last.sl.v2222_5 d L tab k r g1 g2 hR hin) from rfl, a_v2187_5]
      exact acc_step d L fl tab (wL L).val (2 * t1.val + 1) (2 * k.val + 1) 1 _ hRB ⟨47, by decide⟩ ⟨1, by decide⟩ _ rfl _ hw_v2207_5 _ (k1_off108_form ..) _ _
    have a_v1588 : pair1_last.sl.v1588 d L tab k r g1 g2 hR hin = AccMath.accVec (rowF fl tab (wL L).val (2 * t1.val + 1) (2 * k.val + 1)) (offF fl (wL L).val (2 * t1.val + 1) (2 * k.val + 1)) 1 49 := by
      rw [show pair1_last.sl.v1588 d L tab k r g1 g2 hR hin = addf (pair1_last.sl.v2223_5 d L tab k r g1 g2 hR hin) (pair1_last.sl.v1587 d L tab k r g1 g2 hR hin) from rfl, a_v2223_5]
      exact acc_step d L fl tab (wL L).val (2 * t1.val + 1) (2 * k.val + 1) 1 _ hRB ⟨48, by decide⟩ ⟨1, by decide⟩ _ rfl _ hw_v1572 _ (k1_off110_form ..) _ _
    have a_v1622 : pair1_last.sl.v1622 d L tab k r g1 g2 hR hin = AccMath.accVec (rowF fl tab (wL L).val (2 * t1.val + 1) (2 * k.val + 1)) (offF fl (wL L).val (2 * t1.val + 1) (2 * k.val + 1)) 1 50 := by
      rw [show pair1_last.sl.v1622 d L tab k r g1 g2 hR hin = addf (pair1_last.sl.v1588 d L tab k r g1 g2 hR hin) (pair1_last.sl.v1621 d L tab k r g1 g2 hR hin) from rfl, a_v1588]
      exact acc_step d L fl tab (wL L).val (2 * t1.val + 1) (2 * k.val + 1) 1 _ hRB ⟨49, by decide⟩ ⟨1, by decide⟩ _ rfl _ hw_v1606 _ (k1_off111_form ..) _ _
    have a_v1561_B2 : pair1_last.sl.v1561 = AccMath.accVec (rowF fl tab (wL L).val (2 * t1.val + 1) (2 * k.val + 1)) (offF fl (wL L).val (2 * t1.val + 1) (2 * k.val + 1)) 2 0 := acc_zero fl tab (wL L).val (2 * t1.val + 1) (2 * k.val + 1) 2
    have a_v1691_3 : pair1_last.sl.v1691_3 d L tab k r g1 g2 hR hin = AccMath.accVec (rowF fl tab (wL L).val (2 * t1.val + 1) (2 * k.val + 1)) (offF fl (wL L).val (2 * t1.val + 1) (2 * k.val + 1)) 2 1 := by
      rw [show pair1_last.sl.v1691_3 d L tab k r g1 g2 hR hin = addf (pair1_last.sl.v1561) (pair1_last.sl.v1690_3 d L tab k r g1 g2 hR hin) from rfl, a_v1561_B2]
      exact acc_step d L fl tab (wL L).val (2 * t1.val + 1) (2 * k.val + 1) 1 _ hRB ⟨0, by decide⟩ ⟨2, by decide⟩ _ rfl _ hw_v1667_3 _ (k1_off93_form ..) _ _
    have a_v1727_3 : pair1_last.sl.v1727_3 d L tab k r g1 g2 hR hin = AccMath.accVec (rowF fl tab (wL L).val (2 * t1.val + 1) (2 * k.val + 1)) (offF fl (wL L).val (2 * t1.val + 1) (2 * k.val + 1)) 2 2 := by
      rw [show pair1_last.sl.v1727_3 d L tab k r g1 g2 hR hin = addf (pair1_last.sl.v1691_3 d L tab k r g1 g2 hR hin) (pair1_last.sl.v1726_3 d L tab k r g1 g2 hR hin) from rfl, a_v1691_3]
      exact acc_step d L fl tab (wL L).val (2 * t1.val + 1) (2 * k.val + 1) 1 _ hRB ⟨1, by decide⟩ ⟨2, by decide⟩ _ rfl _ hw_v1703_3 _ (k1_off94_form ..) _ _
    have a_v1763_3 : pair1_last.sl.v1763_3 d L tab k r g1 g2 hR hin = AccMath.accVec (rowF fl tab (wL L).val (2 * t1.val + 1) (2 * k.val + 1)) (offF fl (wL L).val (2 * t1.val + 1) (2 * k.val + 1)) 2 3 := by
      rw [show pair1_last.sl.v1763_3 d L tab k r g1 g2 hR hin = addf (pair1_last.sl.v1727_3 d L tab k r g1 g2 hR hin) (pair1_last.sl.v1762_3 d L tab k r g1 g2 hR hin) from rfl, a_v1727_3]
      exact acc_step d L fl tab (wL L).val (2 * t1.val + 1) (2 * k.val + 1) 1 _ hRB ⟨2, by decide⟩ ⟨2, by decide⟩ _ rfl _ hw_v1739_3 _ (k1_off95_form ..) _ _
    have a_v1799_3 : pair1_last.sl.v1799_3 d L tab k r g1 g2 hR hin = AccMath.accVec (rowF fl tab (wL L).val (2 * t1.val + 1) (2 * k.val + 1)) (offF fl (wL L).val (2 * t1.val + 1) (2 * k.val + 1)) 2 4 := by
      rw [show pair1_last.sl.v1799_3 d L tab k r g1 g2 hR hin = addf (pair1_last.sl.v1763_3 d L tab k r g1 g2 hR hin) (pair1_last.sl.v1798_3 d L tab k r g1 g2 hR hin) from rfl, a_v1763_3]
      exact acc_step d L fl tab (wL L).val (2 * t1.val + 1) (2 * k.val + 1) 1 _ hRB ⟨3, by decide⟩ ⟨2, by decide⟩ _ rfl _ hw_v1775_3 _ (k1_off96_form ..) _ _
    have a_v1835_3 : pair1_last.sl.v1835_3 d L tab k r g1 g2 hR hin = AccMath.accVec (rowF fl tab (wL L).val (2 * t1.val + 1) (2 * k.val + 1)) (offF fl (wL L).val (2 * t1.val + 1) (2 * k.val + 1)) 2 5 := by
      rw [show pair1_last.sl.v1835_3 d L tab k r g1 g2 hR hin = addf (pair1_last.sl.v1799_3 d L tab k r g1 g2 hR hin) (pair1_last.sl.v1834_3 d L tab k r g1 g2 hR hin) from rfl, a_v1799_3]
      exact acc_step d L fl tab (wL L).val (2 * t1.val + 1) (2 * k.val + 1) 1 _ hRB ⟨4, by decide⟩ ⟨2, by decide⟩ _ rfl _ hw_v1811_3 _ (k1_off97_form ..) _ _
    have a_v1871_3 : pair1_last.sl.v1871_3 d L tab k r g1 g2 hR hin = AccMath.accVec (rowF fl tab (wL L).val (2 * t1.val + 1) (2 * k.val + 1)) (offF fl (wL L).val (2 * t1.val + 1) (2 * k.val + 1)) 2 6 := by
      rw [show pair1_last.sl.v1871_3 d L tab k r g1 g2 hR hin = addf (pair1_last.sl.v1835_3 d L tab k r g1 g2 hR hin) (pair1_last.sl.v1870_3 d L tab k r g1 g2 hR hin) from rfl, a_v1835_3]
      exact acc_step d L fl tab (wL L).val (2 * t1.val + 1) (2 * k.val + 1) 1 _ hRB ⟨5, by decide⟩ ⟨2, by decide⟩ _ rfl _ hw_v1847_3 _ (k1_off98_form ..) _ _
    have a_v1907_3 : pair1_last.sl.v1907_3 d L tab k r g1 g2 hR hin = AccMath.accVec (rowF fl tab (wL L).val (2 * t1.val + 1) (2 * k.val + 1)) (offF fl (wL L).val (2 * t1.val + 1) (2 * k.val + 1)) 2 7 := by
      rw [show pair1_last.sl.v1907_3 d L tab k r g1 g2 hR hin = addf (pair1_last.sl.v1871_3 d L tab k r g1 g2 hR hin) (pair1_last.sl.v1906_3 d L tab k r g1 g2 hR hin) from rfl, a_v1871_3]
      exact acc_step d L fl tab (wL L).val (2 * t1.val + 1) (2 * k.val + 1) 1 _ hRB ⟨6, by decide⟩ ⟨2, by decide⟩ _ rfl _ hw_v1883_3 _ (k1_off99_form ..) _ _
    have a_v1943_3 : pair1_last.sl.v1943_3 d L tab k r g1 g2 hR hin = AccMath.accVec (rowF fl tab (wL L).val (2 * t1.val + 1) (2 * k.val + 1)) (offF fl (wL L).val (2 * t1.val + 1) (2 * k.val + 1)) 2 8 := by
      rw [show pair1_last.sl.v1943_3 d L tab k r g1 g2 hR hin = addf (pair1_last.sl.v1907_3 d L tab k r g1 g2 hR hin) (pair1_last.sl.v1942_3 d L tab k r g1 g2 hR hin) from rfl, a_v1907_3]
      exact acc_step d L fl tab (wL L).val (2 * t1.val + 1) (2 * k.val + 1) 1 _ hRB ⟨7, by decide⟩ ⟨2, by decide⟩ _ rfl _ hw_v1919_3 _ (k1_off100_form ..) _ _
    have a_v1979_3 : pair1_last.sl.v1979_3 d L tab k r g1 g2 hR hin = AccMath.accVec (rowF fl tab (wL L).val (2 * t1.val + 1) (2 * k.val + 1)) (offF fl (wL L).val (2 * t1.val + 1) (2 * k.val + 1)) 2 9 := by
      rw [show pair1_last.sl.v1979_3 d L tab k r g1 g2 hR hin = addf (pair1_last.sl.v1943_3 d L tab k r g1 g2 hR hin) (pair1_last.sl.v1978_3 d L tab k r g1 g2 hR hin) from rfl, a_v1943_3]
      exact acc_step d L fl tab (wL L).val (2 * t1.val + 1) (2 * k.val + 1) 1 _ hRB ⟨8, by decide⟩ ⟨2, by decide⟩ _ rfl _ hw_v1955_3 _ (k1_off101_form ..) _ _
    have a_v2015_3 : pair1_last.sl.v2015_3 d L tab k r g1 g2 hR hin = AccMath.accVec (rowF fl tab (wL L).val (2 * t1.val + 1) (2 * k.val + 1)) (offF fl (wL L).val (2 * t1.val + 1) (2 * k.val + 1)) 2 10 := by
      rw [show pair1_last.sl.v2015_3 d L tab k r g1 g2 hR hin = addf (pair1_last.sl.v1979_3 d L tab k r g1 g2 hR hin) (pair1_last.sl.v2014_3 d L tab k r g1 g2 hR hin) from rfl, a_v1979_3]
      exact acc_step d L fl tab (wL L).val (2 * t1.val + 1) (2 * k.val + 1) 1 _ hRB ⟨9, by decide⟩ ⟨2, by decide⟩ _ rfl _ hw_v1991_3 _ (k1_off102_form ..) _ _
    have a_v2051_3 : pair1_last.sl.v2051_3 d L tab k r g1 g2 hR hin = AccMath.accVec (rowF fl tab (wL L).val (2 * t1.val + 1) (2 * k.val + 1)) (offF fl (wL L).val (2 * t1.val + 1) (2 * k.val + 1)) 2 11 := by
      rw [show pair1_last.sl.v2051_3 d L tab k r g1 g2 hR hin = addf (pair1_last.sl.v2015_3 d L tab k r g1 g2 hR hin) (pair1_last.sl.v2050_3 d L tab k r g1 g2 hR hin) from rfl, a_v2015_3]
      exact acc_step d L fl tab (wL L).val (2 * t1.val + 1) (2 * k.val + 1) 1 _ hRB ⟨10, by decide⟩ ⟨2, by decide⟩ _ rfl _ hw_v2027_3 _ (k1_off103_form ..) _ _
    have a_v2087_3 : pair1_last.sl.v2087_3 d L tab k r g1 g2 hR hin = AccMath.accVec (rowF fl tab (wL L).val (2 * t1.val + 1) (2 * k.val + 1)) (offF fl (wL L).val (2 * t1.val + 1) (2 * k.val + 1)) 2 12 := by
      rw [show pair1_last.sl.v2087_3 d L tab k r g1 g2 hR hin = addf (pair1_last.sl.v2051_3 d L tab k r g1 g2 hR hin) (pair1_last.sl.v2086_3 d L tab k r g1 g2 hR hin) from rfl, a_v2051_3]
      exact acc_step d L fl tab (wL L).val (2 * t1.val + 1) (2 * k.val + 1) 1 _ hRB ⟨11, by decide⟩ ⟨2, by decide⟩ _ rfl _ hw_v2063_3 _ (k1_off104_form ..) _ _
    have a_v2123_3 : pair1_last.sl.v2123_3 d L tab k r g1 g2 hR hin = AccMath.accVec (rowF fl tab (wL L).val (2 * t1.val + 1) (2 * k.val + 1)) (offF fl (wL L).val (2 * t1.val + 1) (2 * k.val + 1)) 2 13 := by
      rw [show pair1_last.sl.v2123_3 d L tab k r g1 g2 hR hin = addf (pair1_last.sl.v2087_3 d L tab k r g1 g2 hR hin) (pair1_last.sl.v2122_3 d L tab k r g1 g2 hR hin) from rfl, a_v2087_3]
      exact acc_step d L fl tab (wL L).val (2 * t1.val + 1) (2 * k.val + 1) 1 _ hRB ⟨12, by decide⟩ ⟨2, by decide⟩ _ rfl _ hw_v2099_3 _ (k1_off105_form ..) _ _
    have a_v2159_3 : pair1_last.sl.v2159_3 d L tab k r g1 g2 hR hin = AccMath.accVec (rowF fl tab (wL L).val (2 * t1.val + 1) (2 * k.val + 1)) (offF fl (wL L).val (2 * t1.val + 1) (2 * k.val + 1)) 2 14 := by
      rw [show pair1_last.sl.v2159_3 d L tab k r g1 g2 hR hin = addf (pair1_last.sl.v2123_3 d L tab k r g1 g2 hR hin) (pair1_last.sl.v2158_3 d L tab k r g1 g2 hR hin) from rfl, a_v2123_3]
      exact acc_step d L fl tab (wL L).val (2 * t1.val + 1) (2 * k.val + 1) 1 _ hRB ⟨13, by decide⟩ ⟨2, by decide⟩ _ rfl _ hw_v2135_3 _ (k1_off106_form ..) _ _
    have a_v2195_3 : pair1_last.sl.v2195_3 d L tab k r g1 g2 hR hin = AccMath.accVec (rowF fl tab (wL L).val (2 * t1.val + 1) (2 * k.val + 1)) (offF fl (wL L).val (2 * t1.val + 1) (2 * k.val + 1)) 2 15 := by
      rw [show pair1_last.sl.v2195_3 d L tab k r g1 g2 hR hin = addf (pair1_last.sl.v2159_3 d L tab k r g1 g2 hR hin) (pair1_last.sl.v2194_3 d L tab k r g1 g2 hR hin) from rfl, a_v2159_3]
      exact acc_step d L fl tab (wL L).val (2 * t1.val + 1) (2 * k.val + 1) 1 _ hRB ⟨14, by decide⟩ ⟨2, by decide⟩ _ rfl _ hw_v2171_3 _ (k1_off107_form ..) _ _
    have a_v2231_3 : pair1_last.sl.v2231_3 d L tab k r g1 g2 hR hin = AccMath.accVec (rowF fl tab (wL L).val (2 * t1.val + 1) (2 * k.val + 1)) (offF fl (wL L).val (2 * t1.val + 1) (2 * k.val + 1)) 2 16 := by
      rw [show pair1_last.sl.v2231_3 d L tab k r g1 g2 hR hin = addf (pair1_last.sl.v2195_3 d L tab k r g1 g2 hR hin) (pair1_last.sl.v2230_3 d L tab k r g1 g2 hR hin) from rfl, a_v2195_3]
      exact acc_step d L fl tab (wL L).val (2 * t1.val + 1) (2 * k.val + 1) 1 _ hRB ⟨15, by decide⟩ ⟨2, by decide⟩ _ rfl _ hw_v2207_3 _ (k1_off108_form ..) _ _
    have a_v1691_4 : pair1_last.sl.v1691_4 d L tab k r g1 g2 hR hin = AccMath.accVec (rowF fl tab (wL L).val (2 * t1.val + 1) (2 * k.val + 1)) (offF fl (wL L).val (2 * t1.val + 1) (2 * k.val + 1)) 2 17 := by
      rw [show pair1_last.sl.v1691_4 d L tab k r g1 g2 hR hin = addf (pair1_last.sl.v2231_3 d L tab k r g1 g2 hR hin) (pair1_last.sl.v1690_4 d L tab k r g1 g2 hR hin) from rfl, a_v2231_3]
      exact acc_step d L fl tab (wL L).val (2 * t1.val + 1) (2 * k.val + 1) 1 _ hRB ⟨16, by decide⟩ ⟨2, by decide⟩ _ rfl _ hw_v1667_4 _ (k1_off93_form ..) _ _
    have a_v1727_4 : pair1_last.sl.v1727_4 d L tab k r g1 g2 hR hin = AccMath.accVec (rowF fl tab (wL L).val (2 * t1.val + 1) (2 * k.val + 1)) (offF fl (wL L).val (2 * t1.val + 1) (2 * k.val + 1)) 2 18 := by
      rw [show pair1_last.sl.v1727_4 d L tab k r g1 g2 hR hin = addf (pair1_last.sl.v1691_4 d L tab k r g1 g2 hR hin) (pair1_last.sl.v1726_4 d L tab k r g1 g2 hR hin) from rfl, a_v1691_4]
      exact acc_step d L fl tab (wL L).val (2 * t1.val + 1) (2 * k.val + 1) 1 _ hRB ⟨17, by decide⟩ ⟨2, by decide⟩ _ rfl _ hw_v1703_4 _ (k1_off94_form ..) _ _
    have a_v1763_4 : pair1_last.sl.v1763_4 d L tab k r g1 g2 hR hin = AccMath.accVec (rowF fl tab (wL L).val (2 * t1.val + 1) (2 * k.val + 1)) (offF fl (wL L).val (2 * t1.val + 1) (2 * k.val + 1)) 2 19 := by
      rw [show pair1_last.sl.v1763_4 d L tab k r g1 g2 hR hin = addf (pair1_last.sl.v1727_4 d L tab k r g1 g2 hR hin) (pair1_last.sl.v1762_4 d L tab k r g1 g2 hR hin) from rfl, a_v1727_4]
      exact acc_step d L fl tab (wL L).val (2 * t1.val + 1) (2 * k.val + 1) 1 _ hRB ⟨18, by decide⟩ ⟨2, by decide⟩ _ rfl _ hw_v1739_4 _ (k1_off95_form ..) _ _
    have a_v1799_4 : pair1_last.sl.v1799_4 d L tab k r g1 g2 hR hin = AccMath.accVec (rowF fl tab (wL L).val (2 * t1.val + 1) (2 * k.val + 1)) (offF fl (wL L).val (2 * t1.val + 1) (2 * k.val + 1)) 2 20 := by
      rw [show pair1_last.sl.v1799_4 d L tab k r g1 g2 hR hin = addf (pair1_last.sl.v1763_4 d L tab k r g1 g2 hR hin) (pair1_last.sl.v1798_4 d L tab k r g1 g2 hR hin) from rfl, a_v1763_4]
      exact acc_step d L fl tab (wL L).val (2 * t1.val + 1) (2 * k.val + 1) 1 _ hRB ⟨19, by decide⟩ ⟨2, by decide⟩ _ rfl _ hw_v1775_4 _ (k1_off96_form ..) _ _
    have a_v1835_4 : pair1_last.sl.v1835_4 d L tab k r g1 g2 hR hin = AccMath.accVec (rowF fl tab (wL L).val (2 * t1.val + 1) (2 * k.val + 1)) (offF fl (wL L).val (2 * t1.val + 1) (2 * k.val + 1)) 2 21 := by
      rw [show pair1_last.sl.v1835_4 d L tab k r g1 g2 hR hin = addf (pair1_last.sl.v1799_4 d L tab k r g1 g2 hR hin) (pair1_last.sl.v1834_4 d L tab k r g1 g2 hR hin) from rfl, a_v1799_4]
      exact acc_step d L fl tab (wL L).val (2 * t1.val + 1) (2 * k.val + 1) 1 _ hRB ⟨20, by decide⟩ ⟨2, by decide⟩ _ rfl _ hw_v1811_4 _ (k1_off97_form ..) _ _
    have a_v1871_4 : pair1_last.sl.v1871_4 d L tab k r g1 g2 hR hin = AccMath.accVec (rowF fl tab (wL L).val (2 * t1.val + 1) (2 * k.val + 1)) (offF fl (wL L).val (2 * t1.val + 1) (2 * k.val + 1)) 2 22 := by
      rw [show pair1_last.sl.v1871_4 d L tab k r g1 g2 hR hin = addf (pair1_last.sl.v1835_4 d L tab k r g1 g2 hR hin) (pair1_last.sl.v1870_4 d L tab k r g1 g2 hR hin) from rfl, a_v1835_4]
      exact acc_step d L fl tab (wL L).val (2 * t1.val + 1) (2 * k.val + 1) 1 _ hRB ⟨21, by decide⟩ ⟨2, by decide⟩ _ rfl _ hw_v1847_4 _ (k1_off98_form ..) _ _
    have a_v1907_4 : pair1_last.sl.v1907_4 d L tab k r g1 g2 hR hin = AccMath.accVec (rowF fl tab (wL L).val (2 * t1.val + 1) (2 * k.val + 1)) (offF fl (wL L).val (2 * t1.val + 1) (2 * k.val + 1)) 2 23 := by
      rw [show pair1_last.sl.v1907_4 d L tab k r g1 g2 hR hin = addf (pair1_last.sl.v1871_4 d L tab k r g1 g2 hR hin) (pair1_last.sl.v1906_4 d L tab k r g1 g2 hR hin) from rfl, a_v1871_4]
      exact acc_step d L fl tab (wL L).val (2 * t1.val + 1) (2 * k.val + 1) 1 _ hRB ⟨22, by decide⟩ ⟨2, by decide⟩ _ rfl _ hw_v1883_4 _ (k1_off99_form ..) _ _
    have a_v1943_4 : pair1_last.sl.v1943_4 d L tab k r g1 g2 hR hin = AccMath.accVec (rowF fl tab (wL L).val (2 * t1.val + 1) (2 * k.val + 1)) (offF fl (wL L).val (2 * t1.val + 1) (2 * k.val + 1)) 2 24 := by
      rw [show pair1_last.sl.v1943_4 d L tab k r g1 g2 hR hin = addf (pair1_last.sl.v1907_4 d L tab k r g1 g2 hR hin) (pair1_last.sl.v1942_4 d L tab k r g1 g2 hR hin) from rfl, a_v1907_4]
      exact acc_step d L fl tab (wL L).val (2 * t1.val + 1) (2 * k.val + 1) 1 _ hRB ⟨23, by decide⟩ ⟨2, by decide⟩ _ rfl _ hw_v1919_4 _ (k1_off100_form ..) _ _
    have a_v1979_4 : pair1_last.sl.v1979_4 d L tab k r g1 g2 hR hin = AccMath.accVec (rowF fl tab (wL L).val (2 * t1.val + 1) (2 * k.val + 1)) (offF fl (wL L).val (2 * t1.val + 1) (2 * k.val + 1)) 2 25 := by
      rw [show pair1_last.sl.v1979_4 d L tab k r g1 g2 hR hin = addf (pair1_last.sl.v1943_4 d L tab k r g1 g2 hR hin) (pair1_last.sl.v1978_4 d L tab k r g1 g2 hR hin) from rfl, a_v1943_4]
      exact acc_step d L fl tab (wL L).val (2 * t1.val + 1) (2 * k.val + 1) 1 _ hRB ⟨24, by decide⟩ ⟨2, by decide⟩ _ rfl _ hw_v1955_4 _ (k1_off101_form ..) _ _
    have a_v2015_4 : pair1_last.sl.v2015_4 d L tab k r g1 g2 hR hin = AccMath.accVec (rowF fl tab (wL L).val (2 * t1.val + 1) (2 * k.val + 1)) (offF fl (wL L).val (2 * t1.val + 1) (2 * k.val + 1)) 2 26 := by
      rw [show pair1_last.sl.v2015_4 d L tab k r g1 g2 hR hin = addf (pair1_last.sl.v1979_4 d L tab k r g1 g2 hR hin) (pair1_last.sl.v2014_4 d L tab k r g1 g2 hR hin) from rfl, a_v1979_4]
      exact acc_step d L fl tab (wL L).val (2 * t1.val + 1) (2 * k.val + 1) 1 _ hRB ⟨25, by decide⟩ ⟨2, by decide⟩ _ rfl _ hw_v1991_4 _ (k1_off102_form ..) _ _
    have a_v2051_4 : pair1_last.sl.v2051_4 d L tab k r g1 g2 hR hin = AccMath.accVec (rowF fl tab (wL L).val (2 * t1.val + 1) (2 * k.val + 1)) (offF fl (wL L).val (2 * t1.val + 1) (2 * k.val + 1)) 2 27 := by
      rw [show pair1_last.sl.v2051_4 d L tab k r g1 g2 hR hin = addf (pair1_last.sl.v2015_4 d L tab k r g1 g2 hR hin) (pair1_last.sl.v2050_4 d L tab k r g1 g2 hR hin) from rfl, a_v2015_4]
      exact acc_step d L fl tab (wL L).val (2 * t1.val + 1) (2 * k.val + 1) 1 _ hRB ⟨26, by decide⟩ ⟨2, by decide⟩ _ rfl _ hw_v2027_4 _ (k1_off103_form ..) _ _
    have a_v2087_4 : pair1_last.sl.v2087_4 d L tab k r g1 g2 hR hin = AccMath.accVec (rowF fl tab (wL L).val (2 * t1.val + 1) (2 * k.val + 1)) (offF fl (wL L).val (2 * t1.val + 1) (2 * k.val + 1)) 2 28 := by
      rw [show pair1_last.sl.v2087_4 d L tab k r g1 g2 hR hin = addf (pair1_last.sl.v2051_4 d L tab k r g1 g2 hR hin) (pair1_last.sl.v2086_4 d L tab k r g1 g2 hR hin) from rfl, a_v2051_4]
      exact acc_step d L fl tab (wL L).val (2 * t1.val + 1) (2 * k.val + 1) 1 _ hRB ⟨27, by decide⟩ ⟨2, by decide⟩ _ rfl _ hw_v2063_4 _ (k1_off104_form ..) _ _
    have a_v2123_4 : pair1_last.sl.v2123_4 d L tab k r g1 g2 hR hin = AccMath.accVec (rowF fl tab (wL L).val (2 * t1.val + 1) (2 * k.val + 1)) (offF fl (wL L).val (2 * t1.val + 1) (2 * k.val + 1)) 2 29 := by
      rw [show pair1_last.sl.v2123_4 d L tab k r g1 g2 hR hin = addf (pair1_last.sl.v2087_4 d L tab k r g1 g2 hR hin) (pair1_last.sl.v2122_4 d L tab k r g1 g2 hR hin) from rfl, a_v2087_4]
      exact acc_step d L fl tab (wL L).val (2 * t1.val + 1) (2 * k.val + 1) 1 _ hRB ⟨28, by decide⟩ ⟨2, by decide⟩ _ rfl _ hw_v2099_4 _ (k1_off105_form ..) _ _
    have a_v2159_4 : pair1_last.sl.v2159_4 d L tab k r g1 g2 hR hin = AccMath.accVec (rowF fl tab (wL L).val (2 * t1.val + 1) (2 * k.val + 1)) (offF fl (wL L).val (2 * t1.val + 1) (2 * k.val + 1)) 2 30 := by
      rw [show pair1_last.sl.v2159_4 d L tab k r g1 g2 hR hin = addf (pair1_last.sl.v2123_4 d L tab k r g1 g2 hR hin) (pair1_last.sl.v2158_4 d L tab k r g1 g2 hR hin) from rfl, a_v2123_4]
      exact acc_step d L fl tab (wL L).val (2 * t1.val + 1) (2 * k.val + 1) 1 _ hRB ⟨29, by decide⟩ ⟨2, by decide⟩ _ rfl _ hw_v2135_4 _ (k1_off106_form ..) _ _
    have a_v2195_4 : pair1_last.sl.v2195_4 d L tab k r g1 g2 hR hin = AccMath.accVec (rowF fl tab (wL L).val (2 * t1.val + 1) (2 * k.val + 1)) (offF fl (wL L).val (2 * t1.val + 1) (2 * k.val + 1)) 2 31 := by
      rw [show pair1_last.sl.v2195_4 d L tab k r g1 g2 hR hin = addf (pair1_last.sl.v2159_4 d L tab k r g1 g2 hR hin) (pair1_last.sl.v2194_4 d L tab k r g1 g2 hR hin) from rfl, a_v2159_4]
      exact acc_step d L fl tab (wL L).val (2 * t1.val + 1) (2 * k.val + 1) 1 _ hRB ⟨30, by decide⟩ ⟨2, by decide⟩ _ rfl _ hw_v2171_4 _ (k1_off107_form ..) _ _
    have a_v2231_4 : pair1_last.sl.v2231_4 d L tab k r g1 g2 hR hin = AccMath.accVec (rowF fl tab (wL L).val (2 * t1.val + 1) (2 * k.val + 1)) (offF fl (wL L).val (2 * t1.val + 1) (2 * k.val + 1)) 2 32 := by
      rw [show pair1_last.sl.v2231_4 d L tab k r g1 g2 hR hin = addf (pair1_last.sl.v2195_4 d L tab k r g1 g2 hR hin) (pair1_last.sl.v2230_4 d L tab k r g1 g2 hR hin) from rfl, a_v2195_4]
      exact acc_step d L fl tab (wL L).val (2 * t1.val + 1) (2 * k.val + 1) 1 _ hRB ⟨31, by decide⟩ ⟨2, by decide⟩ _ rfl _ hw_v2207_4 _ (k1_off108_form ..) _ _
    have a_v1691_5 : pair1_last.sl.v1691_5 d L tab k r g1 g2 hR hin = AccMath.accVec (rowF fl tab (wL L).val (2 * t1.val + 1) (2 * k.val + 1)) (offF fl (wL L).val (2 * t1.val + 1) (2 * k.val + 1)) 2 33 := by
      rw [show pair1_last.sl.v1691_5 d L tab k r g1 g2 hR hin = addf (pair1_last.sl.v2231_4 d L tab k r g1 g2 hR hin) (pair1_last.sl.v1690_5 d L tab k r g1 g2 hR hin) from rfl, a_v2231_4]
      exact acc_step d L fl tab (wL L).val (2 * t1.val + 1) (2 * k.val + 1) 1 _ hRB ⟨32, by decide⟩ ⟨2, by decide⟩ _ rfl _ hw_v1667_5 _ (k1_off93_form ..) _ _
    have a_v1727_5 : pair1_last.sl.v1727_5 d L tab k r g1 g2 hR hin = AccMath.accVec (rowF fl tab (wL L).val (2 * t1.val + 1) (2 * k.val + 1)) (offF fl (wL L).val (2 * t1.val + 1) (2 * k.val + 1)) 2 34 := by
      rw [show pair1_last.sl.v1727_5 d L tab k r g1 g2 hR hin = addf (pair1_last.sl.v1691_5 d L tab k r g1 g2 hR hin) (pair1_last.sl.v1726_5 d L tab k r g1 g2 hR hin) from rfl, a_v1691_5]
      exact acc_step d L fl tab (wL L).val (2 * t1.val + 1) (2 * k.val + 1) 1 _ hRB ⟨33, by decide⟩ ⟨2, by decide⟩ _ rfl _ hw_v1703_5 _ (k1_off94_form ..) _ _
    have a_v1763_5 : pair1_last.sl.v1763_5 d L tab k r g1 g2 hR hin = AccMath.accVec (rowF fl tab (wL L).val (2 * t1.val + 1) (2 * k.val + 1)) (offF fl (wL L).val (2 * t1.val + 1) (2 * k.val + 1)) 2 35 := by
      rw [show pair1_last.sl.v1763_5 d L tab k r g1 g2 hR hin = addf (pair1_last.sl.v1727_5 d L tab k r g1 g2 hR hin) (pair1_last.sl.v1762_5 d L tab k r g1 g2 hR hin) from rfl, a_v1727_5]
      exact acc_step d L fl tab (wL L).val (2 * t1.val + 1) (2 * k.val + 1) 1 _ hRB ⟨34, by decide⟩ ⟨2, by decide⟩ _ rfl _ hw_v1739_5 _ (k1_off95_form ..) _ _
    have a_v1799_5 : pair1_last.sl.v1799_5 d L tab k r g1 g2 hR hin = AccMath.accVec (rowF fl tab (wL L).val (2 * t1.val + 1) (2 * k.val + 1)) (offF fl (wL L).val (2 * t1.val + 1) (2 * k.val + 1)) 2 36 := by
      rw [show pair1_last.sl.v1799_5 d L tab k r g1 g2 hR hin = addf (pair1_last.sl.v1763_5 d L tab k r g1 g2 hR hin) (pair1_last.sl.v1798_5 d L tab k r g1 g2 hR hin) from rfl, a_v1763_5]
      exact acc_step d L fl tab (wL L).val (2 * t1.val + 1) (2 * k.val + 1) 1 _ hRB ⟨35, by decide⟩ ⟨2, by decide⟩ _ rfl _ hw_v1775_5 _ (k1_off96_form ..) _ _
    have a_v1835_5 : pair1_last.sl.v1835_5 d L tab k r g1 g2 hR hin = AccMath.accVec (rowF fl tab (wL L).val (2 * t1.val + 1) (2 * k.val + 1)) (offF fl (wL L).val (2 * t1.val + 1) (2 * k.val + 1)) 2 37 := by
      rw [show pair1_last.sl.v1835_5 d L tab k r g1 g2 hR hin = addf (pair1_last.sl.v1799_5 d L tab k r g1 g2 hR hin) (pair1_last.sl.v1834_5 d L tab k r g1 g2 hR hin) from rfl, a_v1799_5]
      exact acc_step d L fl tab (wL L).val (2 * t1.val + 1) (2 * k.val + 1) 1 _ hRB ⟨36, by decide⟩ ⟨2, by decide⟩ _ rfl _ hw_v1811_5 _ (k1_off97_form ..) _ _
    have a_v1871_5 : pair1_last.sl.v1871_5 d L tab k r g1 g2 hR hin = AccMath.accVec (rowF fl tab (wL L).val (2 * t1.val + 1) (2 * k.val + 1)) (offF fl (wL L).val (2 * t1.val + 1) (2 * k.val + 1)) 2 38 := by
      rw [show pair1_last.sl.v1871_5 d L tab k r g1 g2 hR hin = addf (pair1_last.sl.v1835_5 d L tab k r g1 g2 hR hin) (pair1_last.sl.v1870_5 d L tab k r g1 g2 hR hin) from rfl, a_v1835_5]
      exact acc_step d L fl tab (wL L).val (2 * t1.val + 1) (2 * k.val + 1) 1 _ hRB ⟨37, by decide⟩ ⟨2, by decide⟩ _ rfl _ hw_v1847_5 _ (k1_off98_form ..) _ _
    have a_v1907_5 : pair1_last.sl.v1907_5 d L tab k r g1 g2 hR hin = AccMath.accVec (rowF fl tab (wL L).val (2 * t1.val + 1) (2 * k.val + 1)) (offF fl (wL L).val (2 * t1.val + 1) (2 * k.val + 1)) 2 39 := by
      rw [show pair1_last.sl.v1907_5 d L tab k r g1 g2 hR hin = addf (pair1_last.sl.v1871_5 d L tab k r g1 g2 hR hin) (pair1_last.sl.v1906_5 d L tab k r g1 g2 hR hin) from rfl, a_v1871_5]
      exact acc_step d L fl tab (wL L).val (2 * t1.val + 1) (2 * k.val + 1) 1 _ hRB ⟨38, by decide⟩ ⟨2, by decide⟩ _ rfl _ hw_v1883_5 _ (k1_off99_form ..) _ _
    have a_v1943_5 : pair1_last.sl.v1943_5 d L tab k r g1 g2 hR hin = AccMath.accVec (rowF fl tab (wL L).val (2 * t1.val + 1) (2 * k.val + 1)) (offF fl (wL L).val (2 * t1.val + 1) (2 * k.val + 1)) 2 40 := by
      rw [show pair1_last.sl.v1943_5 d L tab k r g1 g2 hR hin = addf (pair1_last.sl.v1907_5 d L tab k r g1 g2 hR hin) (pair1_last.sl.v1942_5 d L tab k r g1 g2 hR hin) from rfl, a_v1907_5]
      exact acc_step d L fl tab (wL L).val (2 * t1.val + 1) (2 * k.val + 1) 1 _ hRB ⟨39, by decide⟩ ⟨2, by decide⟩ _ rfl _ hw_v1919_5 _ (k1_off100_form ..) _ _
    have a_v1979_5 : pair1_last.sl.v1979_5 d L tab k r g1 g2 hR hin = AccMath.accVec (rowF fl tab (wL L).val (2 * t1.val + 1) (2 * k.val + 1)) (offF fl (wL L).val (2 * t1.val + 1) (2 * k.val + 1)) 2 41 := by
      rw [show pair1_last.sl.v1979_5 d L tab k r g1 g2 hR hin = addf (pair1_last.sl.v1943_5 d L tab k r g1 g2 hR hin) (pair1_last.sl.v1978_5 d L tab k r g1 g2 hR hin) from rfl, a_v1943_5]
      exact acc_step d L fl tab (wL L).val (2 * t1.val + 1) (2 * k.val + 1) 1 _ hRB ⟨40, by decide⟩ ⟨2, by decide⟩ _ rfl _ hw_v1955_5 _ (k1_off101_form ..) _ _
    have a_v2015_5 : pair1_last.sl.v2015_5 d L tab k r g1 g2 hR hin = AccMath.accVec (rowF fl tab (wL L).val (2 * t1.val + 1) (2 * k.val + 1)) (offF fl (wL L).val (2 * t1.val + 1) (2 * k.val + 1)) 2 42 := by
      rw [show pair1_last.sl.v2015_5 d L tab k r g1 g2 hR hin = addf (pair1_last.sl.v1979_5 d L tab k r g1 g2 hR hin) (pair1_last.sl.v2014_5 d L tab k r g1 g2 hR hin) from rfl, a_v1979_5]
      exact acc_step d L fl tab (wL L).val (2 * t1.val + 1) (2 * k.val + 1) 1 _ hRB ⟨41, by decide⟩ ⟨2, by decide⟩ _ rfl _ hw_v1991_5 _ (k1_off102_form ..) _ _
    have a_v2051_5 : pair1_last.sl.v2051_5 d L tab k r g1 g2 hR hin = AccMath.accVec (rowF fl tab (wL L).val (2 * t1.val + 1) (2 * k.val + 1)) (offF fl (wL L).val (2 * t1.val + 1) (2 * k.val + 1)) 2 43 := by
      rw [show pair1_last.sl.v2051_5 d L tab k r g1 g2 hR hin = addf (pair1_last.sl.v2015_5 d L tab k r g1 g2 hR hin) (pair1_last.sl.v2050_5 d L tab k r g1 g2 hR hin) from rfl, a_v2015_5]
      exact acc_step d L fl tab (wL L).val (2 * t1.val + 1) (2 * k.val + 1) 1 _ hRB ⟨42, by decide⟩ ⟨2, by decide⟩ _ rfl _ hw_v2027_5 _ (k1_off103_form ..) _ _
    have a_v2087_5 : pair1_last.sl.v2087_5 d L tab k r g1 g2 hR hin = AccMath.accVec (rowF fl tab (wL L).val (2 * t1.val + 1) (2 * k.val + 1)) (offF fl (wL L).val (2 * t1.val + 1) (2 * k.val + 1)) 2 44 := by
      rw [show pair1_last.sl.v2087_5 d L tab k r g1 g2 hR hin = addf (pair1_last.sl.v2051_5 d L tab k r g1 g2 hR hin) (pair1_last.sl.v2086_5 d L tab k r g1 g2 hR hin) from rfl, a_v2051_5]
      exact acc_step d L fl tab (wL L).val (2 * t1.val + 1) (2 * k.val + 1) 1 _ hRB ⟨43, by decide⟩ ⟨2, by decide⟩ _ rfl _ hw_v2063_5 _ (k1_off104_form ..) _ _
    have a_v2123_5 : pair1_last.sl.v2123_5 d L tab k r g1 g2 hR hin = AccMath.accVec (rowF fl tab (wL L).val (2 * t1.val + 1) (2 * k.val + 1)) (offF fl (wL L).val (2 * t1.val + 1) (2 * k.val + 1)) 2 45 := by
      rw [show pair1_last.sl.v2123_5 d L tab k r g1 g2 hR hin = addf (pair1_last.sl.v2087_5 d L tab k r g1 g2 hR hin) (pair1_last.sl.v2122_5 d L tab k r g1 g2 hR hin) from rfl, a_v2087_5]
      exact acc_step d L fl tab (wL L).val (2 * t1.val + 1) (2 * k.val + 1) 1 _ hRB ⟨44, by decide⟩ ⟨2, by decide⟩ _ rfl _ hw_v2099_5 _ (k1_off105_form ..) _ _
    have a_v2159_5 : pair1_last.sl.v2159_5 d L tab k r g1 g2 hR hin = AccMath.accVec (rowF fl tab (wL L).val (2 * t1.val + 1) (2 * k.val + 1)) (offF fl (wL L).val (2 * t1.val + 1) (2 * k.val + 1)) 2 46 := by
      rw [show pair1_last.sl.v2159_5 d L tab k r g1 g2 hR hin = addf (pair1_last.sl.v2123_5 d L tab k r g1 g2 hR hin) (pair1_last.sl.v2158_5 d L tab k r g1 g2 hR hin) from rfl, a_v2123_5]
      exact acc_step d L fl tab (wL L).val (2 * t1.val + 1) (2 * k.val + 1) 1 _ hRB ⟨45, by decide⟩ ⟨2, by decide⟩ _ rfl _ hw_v2135_5 _ (k1_off106_form ..) _ _
    have a_v2195_5 : pair1_last.sl.v2195_5 d L tab k r g1 g2 hR hin = AccMath.accVec (rowF fl tab (wL L).val (2 * t1.val + 1) (2 * k.val + 1)) (offF fl (wL L).val (2 * t1.val + 1) (2 * k.val + 1)) 2 47 := by
      rw [show pair1_last.sl.v2195_5 d L tab k r g1 g2 hR hin = addf (pair1_last.sl.v2159_5 d L tab k r g1 g2 hR hin) (pair1_last.sl.v2194_5 d L tab k r g1 g2 hR hin) from rfl, a_v2159_5]
      exact acc_step d L fl tab (wL L).val (2 * t1.val + 1) (2 * k.val + 1) 1 _ hRB ⟨46, by decide⟩ ⟨2, by decide⟩ _ rfl _ hw_v2171_5 _ (k1_off107_form ..) _ _
    have a_v2231_5 : pair1_last.sl.v2231_5 d L tab k r g1 g2 hR hin = AccMath.accVec (rowF fl tab (wL L).val (2 * t1.val + 1) (2 * k.val + 1)) (offF fl (wL L).val (2 * t1.val + 1) (2 * k.val + 1)) 2 48 := by
      rw [show pair1_last.sl.v2231_5 d L tab k r g1 g2 hR hin = addf (pair1_last.sl.v2195_5 d L tab k r g1 g2 hR hin) (pair1_last.sl.v2230_5 d L tab k r g1 g2 hR hin) from rfl, a_v2195_5]
      exact acc_step d L fl tab (wL L).val (2 * t1.val + 1) (2 * k.val + 1) 1 _ hRB ⟨47, by decide⟩ ⟨2, by decide⟩ _ rfl _ hw_v2207_5 _ (k1_off108_form ..) _ _
    have a_v1596 : pair1_last.sl.v1596 d L tab k r g1 g2 hR hin = AccMath.accVec (rowF fl tab (wL L).val (2 * t1.val + 1) (2 * k.val + 1)) (offF fl (wL L).val (2 * t1.val + 1) (2 * k.val + 1)) 2 49 := by
      rw [show pair1_last.sl.v1596 d L tab k r g1 g2 hR hin = addf (pair1_last.sl.v2231_5 d L tab k r g1 g2 hR hin) (pair1_last.sl.v1595 d L tab k r g1 g2 hR hin) from rfl, a_v2231_5]
      exact acc_step d L fl tab (wL L).val (2 * t1.val + 1) (2 * k.val + 1) 1 _ hRB ⟨48, by decide⟩ ⟨2, by decide⟩ _ rfl _ hw_v1572 _ (k1_off110_form ..) _ _
    have a_v1630 : pair1_last.sl.v1630 d L tab k r g1 g2 hR hin = AccMath.accVec (rowF fl tab (wL L).val (2 * t1.val + 1) (2 * k.val + 1)) (offF fl (wL L).val (2 * t1.val + 1) (2 * k.val + 1)) 2 50 := by
      rw [show pair1_last.sl.v1630 d L tab k r g1 g2 hR hin = addf (pair1_last.sl.v1596 d L tab k r g1 g2 hR hin) (pair1_last.sl.v1629 d L tab k r g1 g2 hR hin) from rfl, a_v1596]
      exact acc_step d L fl tab (wL L).val (2 * t1.val + 1) (2 * k.val + 1) 1 _ hRB ⟨49, by decide⟩ ⟨2, by decide⟩ _ rfl _ hw_v1606 _ (k1_off111_form ..) _ _
    have a_v1561_B3 : pair1_last.sl.v1561 = AccMath.accVec (rowF fl tab (wL L).val (2 * t1.val + 1) (2 * k.val + 1)) (offF fl (wL L).val (2 * t1.val + 1) (2 * k.val + 1)) 3 0 := acc_zero fl tab (wL L).val (2 * t1.val + 1) (2 * k.val + 1) 3
    have a_v1699_3 : pair1_last.sl.v1699_3 d L tab k r g1 g2 hR hin = AccMath.accVec (rowF fl tab (wL L).val (2 * t1.val + 1) (2 * k.val + 1)) (offF fl (wL L).val (2 * t1.val + 1) (2 * k.val + 1)) 3 1 := by
      rw [show pair1_last.sl.v1699_3 d L tab k r g1 g2 hR hin = addf (pair1_last.sl.v1561) (pair1_last.sl.v1698_3 d L tab k r g1 g2 hR hin) from rfl, a_v1561_B3]
      exact acc_step d L fl tab (wL L).val (2 * t1.val + 1) (2 * k.val + 1) 1 _ hRB ⟨0, by decide⟩ ⟨3, by decide⟩ _ rfl _ hw_v1667_3 _ (k1_off93_form ..) _ _
    have a_v1735_3 : pair1_last.sl.v1735_3 d L tab k r g1 g2 hR hin = AccMath.accVec (rowF fl tab (wL L).val (2 * t1.val + 1) (2 * k.val + 1)) (offF fl (wL L).val (2 * t1.val + 1) (2 * k.val + 1)) 3 2 := by
      rw [show pair1_last.sl.v1735_3 d L tab k r g1 g2 hR hin = addf (pair1_last.sl.v1699_3 d L tab k r g1 g2 hR hin) (pair1_last.sl.v1734_3 d L tab k r g1 g2 hR hin) from rfl, a_v1699_3]
      exact acc_step d L fl tab (wL L).val (2 * t1.val + 1) (2 * k.val + 1) 1 _ hRB ⟨1, by decide⟩ ⟨3, by decide⟩ _ rfl _ hw_v1703_3 _ (k1_off94_form ..) _ _
    have a_v1771_3 : pair1_last.sl.v1771_3 d L tab k r g1 g2 hR hin = AccMath.accVec (rowF fl tab (wL L).val (2 * t1.val + 1) (2 * k.val + 1)) (offF fl (wL L).val (2 * t1.val + 1) (2 * k.val + 1)) 3 3 := by
      rw [show pair1_last.sl.v1771_3 d L tab k r g1 g2 hR hin = addf (pair1_last.sl.v1735_3 d L tab k r g1 g2 hR hin) (pair1_last.sl.v1770_3 d L tab k r g1 g2 hR hin) from rfl, a_v1735_3]
      exact acc_step d L fl tab (wL L).val (2 * t1.val + 1) (2 * k.val + 1) 1 _ hRB ⟨2, by decide⟩ ⟨3, by decide⟩ _ rfl _ hw_v1739_3 _ (k1_off95_form ..) _ _
    have a_v1807_3 : pair1_last.sl.v1807_3 d L tab k r g1 g2 hR hin = AccMath.accVec (rowF fl tab (wL L).val (2 * t1.val + 1) (2 * k.val + 1)) (offF fl (wL L).val (2 * t1.val + 1) (2 * k.val + 1)) 3 4 := by
      rw [show pair1_last.sl.v1807_3 d L tab k r g1 g2 hR hin = addf (pair1_last.sl.v1771_3 d L tab k r g1 g2 hR hin) (pair1_last.sl.v1806_3 d L tab k r g1 g2 hR hin) from rfl, a_v1771_3]
      exact acc_step d L fl tab (wL L).val (2 * t1.val + 1) (2 * k.val + 1) 1 _ hRB ⟨3, by decide⟩ ⟨3, by decide⟩ _ rfl _ hw_v1775_3 _ (k1_off96_form ..) _ _
    have a_v1843_3 : pair1_last.sl.v1843_3 d L tab k r g1 g2 hR hin = AccMath.accVec (rowF fl tab (wL L).val (2 * t1.val + 1) (2 * k.val + 1)) (offF fl (wL L).val (2 * t1.val + 1) (2 * k.val + 1)) 3 5 := by
      rw [show pair1_last.sl.v1843_3 d L tab k r g1 g2 hR hin = addf (pair1_last.sl.v1807_3 d L tab k r g1 g2 hR hin) (pair1_last.sl.v1842_3 d L tab k r g1 g2 hR hin) from rfl, a_v1807_3]
      exact acc_step d L fl tab (wL L).val (2 * t1.val + 1) (2 * k.val + 1) 1 _ hRB ⟨4, by decide⟩ ⟨3, by decide⟩ _ rfl _ hw_v1811_3 _ (k1_off97_form ..) _ _
    have a_v1879_3 : pair1_last.sl.v1879_3 d L tab k r g1 g2 hR hin = AccMath.accVec (rowF fl tab (wL L).val (2 * t1.val + 1) (2 * k.val + 1)) (offF fl (wL L).val (2 * t1.val + 1) (2 * k.val + 1)) 3 6 := by
      rw [show pair1_last.sl.v1879_3 d L tab k r g1 g2 hR hin = addf (pair1_last.sl.v1843_3 d L tab k r g1 g2 hR hin) (pair1_last.sl.v1878_3 d L tab k r g1 g2 hR hin) from rfl, a_v1843_3]
      exact acc_step d L fl tab (wL L).val (2 * t1.val + 1) (2 * k.val + 1) 1 _ hRB ⟨5, by decide⟩ ⟨3, by decide⟩ _ rfl _ hw_v1847_3 _ (k1_off98_form ..) _ _
    have a_v1915_3 : pair1_last.sl.v1915_3 d L tab k r g1 g2 hR hin = AccMath.accVec (rowF fl tab (wL L).val (2 * t1.val + 1) (2 * k.val + 1)) (offF fl (wL L).val (2 * t1.val + 1) (2 * k.val + 1)) 3 7 := by
      rw [show pair1_last.sl.v1915_3 d L tab k r g1 g2 hR hin = addf (pair1_last.sl.v1879_3 d L tab k r g1 g2 hR hin) (pair1_last.sl.v1914_3 d L tab k r g1 g2 hR hin) from rfl, a_v1879_3]
      exact acc_step d L fl tab (wL L).val (2 * t1.val + 1) (2 * k.val + 1) 1 _ hRB ⟨6, by decide⟩ ⟨3, by decide⟩ _ rfl _ hw_v1883_3 _ (k1_off99_form ..) _ _
    have a_v1951_3 : pair1_last.sl.v1951_3 d L tab k r g1 g2 hR hin = AccMath.accVec (rowF fl tab (wL L).val (2 * t1.val + 1) (2 * k.val + 1)) (offF fl (wL L).val (2 * t1.val + 1) (2 * k.val + 1)) 3 8 := by
      rw [show pair1_last.sl.v1951_3 d L tab k r g1 g2 hR hin = addf (pair1_last.sl.v1915_3 d L tab k r g1 g2 hR hin) (pair1_last.sl.v1950_3 d L tab k r g1 g2 hR hin) from rfl, a_v1915_3]
      exact acc_step d L fl tab (wL L).val (2 * t1.val + 1) (2 * k.val + 1) 1 _ hRB ⟨7, by decide⟩ ⟨3, by decide⟩ _ rfl _ hw_v1919_3 _ (k1_off100_form ..) _ _
    have a_v1987_3 : pair1_last.sl.v1987_3 d L tab k r g1 g2 hR hin = AccMath.accVec (rowF fl tab (wL L).val (2 * t1.val + 1) (2 * k.val + 1)) (offF fl (wL L).val (2 * t1.val + 1) (2 * k.val + 1)) 3 9 := by
      rw [show pair1_last.sl.v1987_3 d L tab k r g1 g2 hR hin = addf (pair1_last.sl.v1951_3 d L tab k r g1 g2 hR hin) (pair1_last.sl.v1986_3 d L tab k r g1 g2 hR hin) from rfl, a_v1951_3]
      exact acc_step d L fl tab (wL L).val (2 * t1.val + 1) (2 * k.val + 1) 1 _ hRB ⟨8, by decide⟩ ⟨3, by decide⟩ _ rfl _ hw_v1955_3 _ (k1_off101_form ..) _ _
    have a_v2023_3 : pair1_last.sl.v2023_3 d L tab k r g1 g2 hR hin = AccMath.accVec (rowF fl tab (wL L).val (2 * t1.val + 1) (2 * k.val + 1)) (offF fl (wL L).val (2 * t1.val + 1) (2 * k.val + 1)) 3 10 := by
      rw [show pair1_last.sl.v2023_3 d L tab k r g1 g2 hR hin = addf (pair1_last.sl.v1987_3 d L tab k r g1 g2 hR hin) (pair1_last.sl.v2022_3 d L tab k r g1 g2 hR hin) from rfl, a_v1987_3]
      exact acc_step d L fl tab (wL L).val (2 * t1.val + 1) (2 * k.val + 1) 1 _ hRB ⟨9, by decide⟩ ⟨3, by decide⟩ _ rfl _ hw_v1991_3 _ (k1_off102_form ..) _ _
    have a_v2059_3 : pair1_last.sl.v2059_3 d L tab k r g1 g2 hR hin = AccMath.accVec (rowF fl tab (wL L).val (2 * t1.val + 1) (2 * k.val + 1)) (offF fl (wL L).val (2 * t1.val + 1) (2 * k.val + 1)) 3 11 := by
      rw [show pair1_last.sl.v2059_3 d L tab k r g1 g2 hR hin = addf (pair1_last.sl.v2023_3 d L tab k r g1 g2 hR hin) (pair1_last.sl.v2058_3 d L tab k r g1 g2 hR hin) from rfl, a_v2023_3]
      exact acc_step d L fl tab (wL L).val (2 * t1.val + 1) (2 * k.val + 1) 1 _ hRB ⟨10, by decide⟩ ⟨3, by decide⟩ _ rfl _ hw_v2027_3 _ (k1_off103_form ..) _ _
    have a_v2095_3 : pair1_last.sl.v2095_3 d L tab k r g1 g2 hR hin = AccMath.accVec (rowF fl tab (wL L).val (2 * t1.val + 1) (2 * k.val + 1)) (offF fl (wL L).val (2 * t1.val + 1) (2 * k.val + 1)) 3 12 := by
      rw [show pair1_last.sl.v2095_3 d L tab k r g1 g2 hR hin = addf (pair1_last.sl.v2059_3 d L tab k r g1 g2 hR hin) (pair1_last.sl.v2094_3 d L tab k r g1 g2 hR hin) from rfl, a_v2059_3]
      exact acc_step d L fl tab (wL L).val (2 * t1.val + 1) (2 * k.val + 1) 1 _ hRB ⟨11, by decide⟩ ⟨3, by decide⟩ _ rfl _ hw_v2063_3 _ (k1_off104_form ..) _ _
    have a_v2131_3 : pair1_last.sl.v2131_3 d L tab k r g1 g2 hR hin = AccMath.accVec (rowF fl tab (wL L).val (2 * t1.val + 1) (2 * k.val + 1)) (offF fl (wL L).val (2 * t1.val + 1) (2 * k.val + 1)) 3 13 := by
      rw [show pair1_last.sl.v2131_3 d L tab k r g1 g2 hR hin = addf (pair1_last.sl.v2095_3 d L tab k r g1 g2 hR hin) (pair1_last.sl.v2130_3 d L tab k r g1 g2 hR hin) from rfl, a_v2095_3]
      exact acc_step d L fl tab (wL L).val (2 * t1.val + 1) (2 * k.val + 1) 1 _ hRB ⟨12, by decide⟩ ⟨3, by decide⟩ _ rfl _ hw_v2099_3 _ (k1_off105_form ..) _ _
    have a_v2167_3 : pair1_last.sl.v2167_3 d L tab k r g1 g2 hR hin = AccMath.accVec (rowF fl tab (wL L).val (2 * t1.val + 1) (2 * k.val + 1)) (offF fl (wL L).val (2 * t1.val + 1) (2 * k.val + 1)) 3 14 := by
      rw [show pair1_last.sl.v2167_3 d L tab k r g1 g2 hR hin = addf (pair1_last.sl.v2131_3 d L tab k r g1 g2 hR hin) (pair1_last.sl.v2166_3 d L tab k r g1 g2 hR hin) from rfl, a_v2131_3]
      exact acc_step d L fl tab (wL L).val (2 * t1.val + 1) (2 * k.val + 1) 1 _ hRB ⟨13, by decide⟩ ⟨3, by decide⟩ _ rfl _ hw_v2135_3 _ (k1_off106_form ..) _ _
    have a_v2203_3 : pair1_last.sl.v2203_3 d L tab k r g1 g2 hR hin = AccMath.accVec (rowF fl tab (wL L).val (2 * t1.val + 1) (2 * k.val + 1)) (offF fl (wL L).val (2 * t1.val + 1) (2 * k.val + 1)) 3 15 := by
      rw [show pair1_last.sl.v2203_3 d L tab k r g1 g2 hR hin = addf (pair1_last.sl.v2167_3 d L tab k r g1 g2 hR hin) (pair1_last.sl.v2202_3 d L tab k r g1 g2 hR hin) from rfl, a_v2167_3]
      exact acc_step d L fl tab (wL L).val (2 * t1.val + 1) (2 * k.val + 1) 1 _ hRB ⟨14, by decide⟩ ⟨3, by decide⟩ _ rfl _ hw_v2171_3 _ (k1_off107_form ..) _ _
    have a_v2239_3 : pair1_last.sl.v2239_3 d L tab k r g1 g2 hR hin = AccMath.accVec (rowF fl tab (wL L).val (2 * t1.val + 1) (2 * k.val + 1)) (offF fl (wL L).val (2 * t1.val + 1) (2 * k.val + 1)) 3 16 := by
      rw [show pair1_last.sl.v2239_3 d L tab k r g1 g2 hR hin = addf (pair1_last.sl.v2203_3 d L tab k r g1 g2 hR hin) (pair1_last.sl.v2238_3 d L tab k r g1 g2 hR hin) from rfl, a_v2203_3]
      exact acc_step d L fl tab (wL L).val (2 * t1.val + 1) (2 * k.val + 1) 1 _ hRB ⟨15, by decide⟩ ⟨3, by decide⟩ _ rfl _ hw_v2207_3 _ (k1_off108_form ..) _ _
    have a_v1699_4 : pair1_last.sl.v1699_4 d L tab k r g1 g2 hR hin = AccMath.accVec (rowF fl tab (wL L).val (2 * t1.val + 1) (2 * k.val + 1)) (offF fl (wL L).val (2 * t1.val + 1) (2 * k.val + 1)) 3 17 := by
      rw [show pair1_last.sl.v1699_4 d L tab k r g1 g2 hR hin = addf (pair1_last.sl.v2239_3 d L tab k r g1 g2 hR hin) (pair1_last.sl.v1698_4 d L tab k r g1 g2 hR hin) from rfl, a_v2239_3]
      exact acc_step d L fl tab (wL L).val (2 * t1.val + 1) (2 * k.val + 1) 1 _ hRB ⟨16, by decide⟩ ⟨3, by decide⟩ _ rfl _ hw_v1667_4 _ (k1_off93_form ..) _ _
    have a_v1735_4 : pair1_last.sl.v1735_4 d L tab k r g1 g2 hR hin = AccMath.accVec (rowF fl tab (wL L).val (2 * t1.val + 1) (2 * k.val + 1)) (offF fl (wL L).val (2 * t1.val + 1) (2 * k.val + 1)) 3 18 := by
      rw [show pair1_last.sl.v1735_4 d L tab k r g1 g2 hR hin = addf (pair1_last.sl.v1699_4 d L tab k r g1 g2 hR hin) (pair1_last.sl.v1734_4 d L tab k r g1 g2 hR hin) from rfl, a_v1699_4]
      exact acc_step d L fl tab (wL L).val (2 * t1.val + 1) (2 * k.val + 1) 1 _ hRB ⟨17, by decide⟩ ⟨3, by decide⟩ _ rfl _ hw_v1703_4 _ (k1_off94_form ..) _ _
    have a_v1771_4 : pair1_last.sl.v1771_4 d L tab k r g1 g2 hR hin = AccMath.accVec (rowF fl tab (wL L).val (2 * t1.val + 1) (2 * k.val + 1)) (offF fl (wL L).val (2 * t1.val + 1) (2 * k.val + 1)) 3 19 := by
      rw [show pair1_last.sl.v1771_4 d L tab k r g1 g2 hR hin = addf (pair1_last.sl.v1735_4 d L tab k r g1 g2 hR hin) (pair1_last.sl.v1770_4 d L tab k r g1 g2 hR hin) from rfl, a_v1735_4]
      exact acc_step d L fl tab (wL L).val (2 * t1.val + 1) (2 * k.val + 1) 1 _ hRB ⟨18, by decide⟩ ⟨3, by decide⟩ _ rfl _ hw_v1739_4 _ (k1_off95_form ..) _ _
    have a_v1807_4 : pair1_last.sl.v1807_4 d L tab k r g1 g2 hR hin = AccMath.accVec (rowF fl tab (wL L).val (2 * t1.val + 1) (2 * k.val + 1)) (offF fl (wL L).val (2 * t1.val + 1) (2 * k.val + 1)) 3 20 := by
      rw [show pair1_last.sl.v1807_4 d L tab k r g1 g2 hR hin = addf (pair1_last.sl.v1771_4 d L tab k r g1 g2 hR hin) (pair1_last.sl.v1806_4 d L tab k r g1 g2 hR hin) from rfl, a_v1771_4]
      exact acc_step d L fl tab (wL L).val (2 * t1.val + 1) (2 * k.val + 1) 1 _ hRB ⟨19, by decide⟩ ⟨3, by decide⟩ _ rfl _ hw_v1775_4 _ (k1_off96_form ..) _ _
    have a_v1843_4 : pair1_last.sl.v1843_4 d L tab k r g1 g2 hR hin = AccMath.accVec (rowF fl tab (wL L).val (2 * t1.val + 1) (2 * k.val + 1)) (offF fl (wL L).val (2 * t1.val + 1) (2 * k.val + 1)) 3 21 := by
      rw [show pair1_last.sl.v1843_4 d L tab k r g1 g2 hR hin = addf (pair1_last.sl.v1807_4 d L tab k r g1 g2 hR hin) (pair1_last.sl.v1842_4 d L tab k r g1 g2 hR hin) from rfl, a_v1807_4]
      exact acc_step d L fl tab (wL L).val (2 * t1.val + 1) (2 * k.val + 1) 1 _ hRB ⟨20, by decide⟩ ⟨3, by decide⟩ _ rfl _ hw_v1811_4 _ (k1_off97_form ..) _ _
    have a_v1879_4 : pair1_last.sl.v1879_4 d L tab k r g1 g2 hR hin = AccMath.accVec (rowF fl tab (wL L).val (2 * t1.val + 1) (2 * k.val + 1)) (offF fl (wL L).val (2 * t1.val + 1) (2 * k.val + 1)) 3 22 := by
      rw [show pair1_last.sl.v1879_4 d L tab k r g1 g2 hR hin = addf (pair1_last.sl.v1843_4 d L tab k r g1 g2 hR hin) (pair1_last.sl.v1878_4 d L tab k r g1 g2 hR hin) from rfl, a_v1843_4]
      exact acc_step d L fl tab (wL L).val (2 * t1.val + 1) (2 * k.val + 1) 1 _ hRB ⟨21, by decide⟩ ⟨3, by decide⟩ _ rfl _ hw_v1847_4 _ (k1_off98_form ..) _ _
    have a_v1915_4 : pair1_last.sl.v1915_4 d L tab k r g1 g2 hR hin = AccMath.accVec (rowF fl tab (wL L).val (2 * t1.val + 1) (2 * k.val + 1)) (offF fl (wL L).val (2 * t1.val + 1) (2 * k.val + 1)) 3 23 := by
      rw [show pair1_last.sl.v1915_4 d L tab k r g1 g2 hR hin = addf (pair1_last.sl.v1879_4 d L tab k r g1 g2 hR hin) (pair1_last.sl.v1914_4 d L tab k r g1 g2 hR hin) from rfl, a_v1879_4]
      exact acc_step d L fl tab (wL L).val (2 * t1.val + 1) (2 * k.val + 1) 1 _ hRB ⟨22, by decide⟩ ⟨3, by decide⟩ _ rfl _ hw_v1883_4 _ (k1_off99_form ..) _ _
    have a_v1951_4 : pair1_last.sl.v1951_4 d L tab k r g1 g2 hR hin = AccMath.accVec (rowF fl tab (wL L).val (2 * t1.val + 1) (2 * k.val + 1)) (offF fl (wL L).val (2 * t1.val + 1) (2 * k.val + 1)) 3 24 := by
      rw [show pair1_last.sl.v1951_4 d L tab k r g1 g2 hR hin = addf (pair1_last.sl.v1915_4 d L tab k r g1 g2 hR hin) (pair1_last.sl.v1950_4 d L tab k r g1 g2 hR hin) from rfl, a_v1915_4]
      exact acc_step d L fl tab (wL L).val (2 * t1.val + 1) (2 * k.val + 1) 1 _ hRB ⟨23, by decide⟩ ⟨3, by decide⟩ _ rfl _ hw_v1919_4 _ (k1_off100_form ..) _ _
    have a_v1987_4 : pair1_last.sl.v1987_4 d L tab k r g1 g2 hR hin = AccMath.accVec (rowF fl tab (wL L).val (2 * t1.val + 1) (2 * k.val + 1)) (offF fl (wL L).val (2 * t1.val + 1) (2 * k.val + 1)) 3 25 := by
      rw [show pair1_last.sl.v1987_4 d L tab k r g1 g2 hR hin = addf (pair1_last.sl.v1951_4 d L tab k r g1 g2 hR hin) (pair1_last.sl.v1986_4 d L tab k r g1 g2 hR hin) from rfl, a_v1951_4]
      exact acc_step d L fl tab (wL L).val (2 * t1.val + 1) (2 * k.val + 1) 1 _ hRB ⟨24, by decide⟩ ⟨3, by decide⟩ _ rfl _ hw_v1955_4 _ (k1_off101_form ..) _ _
    have a_v2023_4 : pair1_last.sl.v2023_4 d L tab k r g1 g2 hR hin = AccMath.accVec (rowF fl tab (wL L).val (2 * t1.val + 1) (2 * k.val + 1)) (offF fl (wL L).val (2 * t1.val + 1) (2 * k.val + 1)) 3 26 := by
      rw [show pair1_last.sl.v2023_4 d L tab k r g1 g2 hR hin = addf (pair1_last.sl.v1987_4 d L tab k r g1 g2 hR hin) (pair1_last.sl.v2022_4 d L tab k r g1 g2 hR hin) from rfl, a_v1987_4]
      exact acc_step d L fl tab (wL L).val (2 * t1.val + 1) (2 * k.val + 1) 1 _ hRB ⟨25, by decide⟩ ⟨3, by decide⟩ _ rfl _ hw_v1991_4 _ (k1_off102_form ..) _ _
    have a_v2059_4 : pair1_last.sl.v2059_4 d L tab k r g1 g2 hR hin = AccMath.accVec (rowF fl tab (wL L).val (2 * t1.val + 1) (2 * k.val + 1)) (offF fl (wL L).val (2 * t1.val + 1) (2 * k.val + 1)) 3 27 := by
      rw [show pair1_last.sl.v2059_4 d L tab k r g1 g2 hR hin = addf (pair1_last.sl.v2023_4 d L tab k r g1 g2 hR hin) (pair1_last.sl.v2058_4 d L tab k r g1 g2 hR hin) from rfl, a_v2023_4]
      exact acc_step d L fl tab (wL L).val (2 * t1.val + 1) (2 * k.val + 1) 1 _ hRB ⟨26, by decide⟩ ⟨3, by decide⟩ _ rfl _ hw_v2027_4 _ (k1_off103_form ..) _ _
    have a_v2095_4 : pair1_last.sl.v2095_4 d L tab k r g1 g2 hR hin = AccMath.accVec (rowF fl tab (wL L).val (2 * t1.val + 1) (2 * k.val + 1)) (offF fl (wL L).val (2 * t1.val + 1) (2 * k.val + 1)) 3 28 := by
      rw [show pair1_last.sl.v2095_4 d L tab k r g1 g2 hR hin = addf (pair1_last.sl.v2059_4 d L tab k r g1 g2 hR hin) (pair1_last.sl.v2094_4 d L tab k r g1 g2 hR hin) from rfl, a_v2059_4]
      exact acc_step d L fl tab (wL L).val (2 * t1.val + 1) (2 * k.val + 1) 1 _ hRB ⟨27, by decide⟩ ⟨3, by decide⟩ _ rfl _ hw_v2063_4 _ (k1_off104_form ..) _ _
    have a_v2131_4 : pair1_last.sl.v2131_4 d L tab k r g1 g2 hR hin = AccMath.accVec (rowF fl tab (wL L).val (2 * t1.val + 1) (2 * k.val + 1)) (offF fl (wL L).val (2 * t1.val + 1) (2 * k.val + 1)) 3 29 := by
      rw [show pair1_last.sl.v2131_4 d L tab k r g1 g2 hR hin = addf (pair1_last.sl.v2095_4 d L tab k r g1 g2 hR hin) (pair1_last.sl.v2130_4 d L tab k r g1 g2 hR hin) from rfl, a_v2095_4]
      exact acc_step d L fl tab (wL L).val (2 * t1.val + 1) (2 * k.val + 1) 1 _ hRB ⟨28, by decide⟩ ⟨3, by decide⟩ _ rfl _ hw_v2099_4 _ (k1_off105_form ..) _ _
    have a_v2167_4 : pair1_last.sl.v2167_4 d L tab k r g1 g2 hR hin = AccMath.accVec (rowF fl tab (wL L).val (2 * t1.val + 1) (2 * k.val + 1)) (offF fl (wL L).val (2 * t1.val + 1) (2 * k.val + 1)) 3 30 := by
      rw [show pair1_last.sl.v2167_4 d L tab k r g1 g2 hR hin = addf (pair1_last.sl.v2131_4 d L tab k r g1 g2 hR hin) (pair1_last.sl.v2166_4 d L tab k r g1 g2 hR hin) from rfl, a_v2131_4]
      exact acc_step d L fl tab (wL L).val (2 * t1.val + 1) (2 * k.val + 1) 1 _ hRB ⟨29, by decide⟩ ⟨3, by decide⟩ _ rfl _ hw_v2135_4 _ (k1_off106_form ..) _ _
    have a_v2203_4 : pair1_last.sl.v2203_4 d L tab k r g1 g2 hR hin = AccMath.accVec (rowF fl tab (wL L).val (2 * t1.val + 1) (2 * k.val + 1)) (offF fl (wL L).val (2 * t1.val + 1) (2 * k.val + 1)) 3 31 := by
      rw [show pair1_last.sl.v2203_4 d L tab k r g1 g2 hR hin = addf (pair1_last.sl.v2167_4 d L tab k r g1 g2 hR hin) (pair1_last.sl.v2202_4 d L tab k r g1 g2 hR hin) from rfl, a_v2167_4]
      exact acc_step d L fl tab (wL L).val (2 * t1.val + 1) (2 * k.val + 1) 1 _ hRB ⟨30, by decide⟩ ⟨3, by decide⟩ _ rfl _ hw_v2171_4 _ (k1_off107_form ..) _ _
    have a_v2239_4 : pair1_last.sl.v2239_4 d L tab k r g1 g2 hR hin = AccMath.accVec (rowF fl tab (wL L).val (2 * t1.val + 1) (2 * k.val + 1)) (offF fl (wL L).val (2 * t1.val + 1) (2 * k.val + 1)) 3 32 := by
      rw [show pair1_last.sl.v2239_4 d L tab k r g1 g2 hR hin = addf (pair1_last.sl.v2203_4 d L tab k r g1 g2 hR hin) (pair1_last.sl.v2238_4 d L tab k r g1 g2 hR hin) from rfl, a_v2203_4]
      exact acc_step d L fl tab (wL L).val (2 * t1.val + 1) (2 * k.val + 1) 1 _ hRB ⟨31, by decide⟩ ⟨3, by decide⟩ _ rfl _ hw_v2207_4 _ (k1_off108_form ..) _ _
    have a_v1699_5 : pair1_last.sl.v1699_5 d L tab k r g1 g2 hR hin = AccMath.accVec (rowF fl tab (wL L).val (2 * t1.val + 1) (2 * k.val + 1)) (offF fl (wL L).val (2 * t1.val + 1) (2 * k.val + 1)) 3 33 := by
      rw [show pair1_last.sl.v1699_5 d L tab k r g1 g2 hR hin = addf (pair1_last.sl.v2239_4 d L tab k r g1 g2 hR hin) (pair1_last.sl.v1698_5 d L tab k r g1 g2 hR hin) from rfl, a_v2239_4]
      exact acc_step d L fl tab (wL L).val (2 * t1.val + 1) (2 * k.val + 1) 1 _ hRB ⟨32, by decide⟩ ⟨3, by decide⟩ _ rfl _ hw_v1667_5 _ (k1_off93_form ..) _ _
    have a_v1735_5 : pair1_last.sl.v1735_5 d L tab k r g1 g2 hR hin = AccMath.accVec (rowF fl tab (wL L).val (2 * t1.val + 1) (2 * k.val + 1)) (offF fl (wL L).val (2 * t1.val + 1) (2 * k.val + 1)) 3 34 := by
      rw [show pair1_last.sl.v1735_5 d L tab k r g1 g2 hR hin = addf (pair1_last.sl.v1699_5 d L tab k r g1 g2 hR hin) (pair1_last.sl.v1734_5 d L tab k r g1 g2 hR hin) from rfl, a_v1699_5]
      exact acc_step d L fl tab (wL L).val (2 * t1.val + 1) (2 * k.val + 1) 1 _ hRB ⟨33, by decide⟩ ⟨3, by decide⟩ _ rfl _ hw_v1703_5 _ (k1_off94_form ..) _ _
    have a_v1771_5 : pair1_last.sl.v1771_5 d L tab k r g1 g2 hR hin = AccMath.accVec (rowF fl tab (wL L).val (2 * t1.val + 1) (2 * k.val + 1)) (offF fl (wL L).val (2 * t1.val + 1) (2 * k.val + 1)) 3 35 := by
      rw [show pair1_last.sl.v1771_5 d L tab k r g1 g2 hR hin = addf (pair1_last.sl.v1735_5 d L tab k r g1 g2 hR hin) (pair1_last.sl.v1770_5 d L tab k r g1 g2 hR hin) from rfl, a_v1735_5]
      exact acc_step d L fl tab (wL L).val (2 * t1.val + 1) (2 * k.val + 1) 1 _ hRB ⟨34, by decide⟩ ⟨3, by decide⟩ _ rfl _ hw_v1739_5 _ (k1_off95_form ..) _ _
    have a_v1807_5 : pair1_last.sl.v1807_5 d L tab k r g1 g2 hR hin = AccMath.accVec (rowF fl tab (wL L).val (2 * t1.val + 1) (2 * k.val + 1)) (offF fl (wL L).val (2 * t1.val + 1) (2 * k.val + 1)) 3 36 := by
      rw [show pair1_last.sl.v1807_5 d L tab k r g1 g2 hR hin = addf (pair1_last.sl.v1771_5 d L tab k r g1 g2 hR hin) (pair1_last.sl.v1806_5 d L tab k r g1 g2 hR hin) from rfl, a_v1771_5]
      exact acc_step d L fl tab (wL L).val (2 * t1.val + 1) (2 * k.val + 1) 1 _ hRB ⟨35, by decide⟩ ⟨3, by decide⟩ _ rfl _ hw_v1775_5 _ (k1_off96_form ..) _ _
    have a_v1843_5 : pair1_last.sl.v1843_5 d L tab k r g1 g2 hR hin = AccMath.accVec (rowF fl tab (wL L).val (2 * t1.val + 1) (2 * k.val + 1)) (offF fl (wL L).val (2 * t1.val + 1) (2 * k.val + 1)) 3 37 := by
      rw [show pair1_last.sl.v1843_5 d L tab k r g1 g2 hR hin = addf (pair1_last.sl.v1807_5 d L tab k r g1 g2 hR hin) (pair1_last.sl.v1842_5 d L tab k r g1 g2 hR hin) from rfl, a_v1807_5]
      exact acc_step d L fl tab (wL L).val (2 * t1.val + 1) (2 * k.val + 1) 1 _ hRB ⟨36, by decide⟩ ⟨3, by decide⟩ _ rfl _ hw_v1811_5 _ (k1_off97_form ..) _ _
    have a_v1879_5 : pair1_last.sl.v1879_5 d L tab k r g1 g2 hR hin = AccMath.accVec (rowF fl tab (wL L).val (2 * t1.val + 1) (2 * k.val + 1)) (offF fl (wL L).val (2 * t1.val + 1) (2 * k.val + 1)) 3 38 := by
      rw [show pair1_last.sl.v1879_5 d L tab k r g1 g2 hR hin = addf (pair1_last.sl.v1843_5 d L tab k r g1 g2 hR hin) (pair1_last.sl.v1878_5 d L tab k r g1 g2 hR hin) from rfl, a_v1843_5]
      exact acc_step d L fl tab (wL L).val (2 * t1.val + 1) (2 * k.val + 1) 1 _ hRB ⟨37, by decide⟩ ⟨3, by decide⟩ _ rfl _ hw_v1847_5 _ (k1_off98_form ..) _ _
    have a_v1915_5 : pair1_last.sl.v1915_5 d L tab k r g1 g2 hR hin = AccMath.accVec (rowF fl tab (wL L).val (2 * t1.val + 1) (2 * k.val + 1)) (offF fl (wL L).val (2 * t1.val + 1) (2 * k.val + 1)) 3 39 := by
      rw [show pair1_last.sl.v1915_5 d L tab k r g1 g2 hR hin = addf (pair1_last.sl.v1879_5 d L tab k r g1 g2 hR hin) (pair1_last.sl.v1914_5 d L tab k r g1 g2 hR hin) from rfl, a_v1879_5]
      exact acc_step d L fl tab (wL L).val (2 * t1.val + 1) (2 * k.val + 1) 1 _ hRB ⟨38, by decide⟩ ⟨3, by decide⟩ _ rfl _ hw_v1883_5 _ (k1_off99_form ..) _ _
    have a_v1951_5 : pair1_last.sl.v1951_5 d L tab k r g1 g2 hR hin = AccMath.accVec (rowF fl tab (wL L).val (2 * t1.val + 1) (2 * k.val + 1)) (offF fl (wL L).val (2 * t1.val + 1) (2 * k.val + 1)) 3 40 := by
      rw [show pair1_last.sl.v1951_5 d L tab k r g1 g2 hR hin = addf (pair1_last.sl.v1915_5 d L tab k r g1 g2 hR hin) (pair1_last.sl.v1950_5 d L tab k r g1 g2 hR hin) from rfl, a_v1915_5]
      exact acc_step d L fl tab (wL L).val (2 * t1.val + 1) (2 * k.val + 1) 1 _ hRB ⟨39, by decide⟩ ⟨3, by decide⟩ _ rfl _ hw_v1919_5 _ (k1_off100_form ..) _ _
    have a_v1987_5 : pair1_last.sl.v1987_5 d L tab k r g1 g2 hR hin = AccMath.accVec (rowF fl tab (wL L).val (2 * t1.val + 1) (2 * k.val + 1)) (offF fl (wL L).val (2 * t1.val + 1) (2 * k.val + 1)) 3 41 := by
      rw [show pair1_last.sl.v1987_5 d L tab k r g1 g2 hR hin = addf (pair1_last.sl.v1951_5 d L tab k r g1 g2 hR hin) (pair1_last.sl.v1986_5 d L tab k r g1 g2 hR hin) from rfl, a_v1951_5]
      exact acc_step d L fl tab (wL L).val (2 * t1.val + 1) (2 * k.val + 1) 1 _ hRB ⟨40, by decide⟩ ⟨3, by decide⟩ _ rfl _ hw_v1955_5 _ (k1_off101_form ..) _ _
    have a_v2023_5 : pair1_last.sl.v2023_5 d L tab k r g1 g2 hR hin = AccMath.accVec (rowF fl tab (wL L).val (2 * t1.val + 1) (2 * k.val + 1)) (offF fl (wL L).val (2 * t1.val + 1) (2 * k.val + 1)) 3 42 := by
      rw [show pair1_last.sl.v2023_5 d L tab k r g1 g2 hR hin = addf (pair1_last.sl.v1987_5 d L tab k r g1 g2 hR hin) (pair1_last.sl.v2022_5 d L tab k r g1 g2 hR hin) from rfl, a_v1987_5]
      exact acc_step d L fl tab (wL L).val (2 * t1.val + 1) (2 * k.val + 1) 1 _ hRB ⟨41, by decide⟩ ⟨3, by decide⟩ _ rfl _ hw_v1991_5 _ (k1_off102_form ..) _ _
    have a_v2059_5 : pair1_last.sl.v2059_5 d L tab k r g1 g2 hR hin = AccMath.accVec (rowF fl tab (wL L).val (2 * t1.val + 1) (2 * k.val + 1)) (offF fl (wL L).val (2 * t1.val + 1) (2 * k.val + 1)) 3 43 := by
      rw [show pair1_last.sl.v2059_5 d L tab k r g1 g2 hR hin = addf (pair1_last.sl.v2023_5 d L tab k r g1 g2 hR hin) (pair1_last.sl.v2058_5 d L tab k r g1 g2 hR hin) from rfl, a_v2023_5]
      exact acc_step d L fl tab (wL L).val (2 * t1.val + 1) (2 * k.val + 1) 1 _ hRB ⟨42, by decide⟩ ⟨3, by decide⟩ _ rfl _ hw_v2027_5 _ (k1_off103_form ..) _ _
    have a_v2095_5 : pair1_last.sl.v2095_5 d L tab k r g1 g2 hR hin = AccMath.accVec (rowF fl tab (wL L).val (2 * t1.val + 1) (2 * k.val + 1)) (offF fl (wL L).val (2 * t1.val + 1) (2 * k.val + 1)) 3 44 := by
      rw [show pair1_last.sl.v2095_5 d L tab k r g1 g2 hR hin = addf (pair1_last.sl.v2059_5 d L tab k r g1 g2 hR hin) (pair1_last.sl.v2094_5 d L tab k r g1 g2 hR hin) from rfl, a_v2059_5]
      exact acc_step d L fl tab (wL L).val (2 * t1.val + 1) (2 * k.val + 1) 1 _ hRB ⟨43, by decide⟩ ⟨3, by decide⟩ _ rfl _ hw_v2063_5 _ (k1_off104_form ..) _ _
    have a_v2131_5 : pair1_last.sl.v2131_5 d L tab k r g1 g2 hR hin = AccMath.accVec (rowF fl tab (wL L).val (2 * t1.val + 1) (2 * k.val + 1)) (offF fl (wL L).val (2 * t1.val + 1) (2 * k.val + 1)) 3 45 := by
      rw [show pair1_last.sl.v2131_5 d L tab k r g1 g2 hR hin = addf (pair1_last.sl.v2095_5 d L tab k r g1 g2 hR hin) (pair1_last.sl.v2130_5 d L tab k r g1 g2 hR hin) from rfl, a_v2095_5]
      exact acc_step d L fl tab (wL L).val (2 * t1.val + 1) (2 * k.val + 1) 1 _ hRB ⟨44, by decide⟩ ⟨3, by decide⟩ _ rfl _ hw_v2099_5 _ (k1_off105_form ..) _ _
    have a_v2167_5 : pair1_last.sl.v2167_5 d L tab k r g1 g2 hR hin = AccMath.accVec (rowF fl tab (wL L).val (2 * t1.val + 1) (2 * k.val + 1)) (offF fl (wL L).val (2 * t1.val + 1) (2 * k.val + 1)) 3 46 := by
      rw [show pair1_last.sl.v2167_5 d L tab k r g1 g2 hR hin = addf (pair1_last.sl.v2131_5 d L tab k r g1 g2 hR hin) (pair1_last.sl.v2166_5 d L tab k r g1 g2 hR hin) from rfl, a_v2131_5]
      exact acc_step d L fl tab (wL L).val (2 * t1.val + 1) (2 * k.val + 1) 1 _ hRB ⟨45, by decide⟩ ⟨3, by decide⟩ _ rfl _ hw_v2135_5 _ (k1_off106_form ..) _ _
    have a_v2203_5 : pair1_last.sl.v2203_5 d L tab k r g1 g2 hR hin = AccMath.accVec (rowF fl tab (wL L).val (2 * t1.val + 1) (2 * k.val + 1)) (offF fl (wL L).val (2 * t1.val + 1) (2 * k.val + 1)) 3 47 := by
      rw [show pair1_last.sl.v2203_5 d L tab k r g1 g2 hR hin = addf (pair1_last.sl.v2167_5 d L tab k r g1 g2 hR hin) (pair1_last.sl.v2202_5 d L tab k r g1 g2 hR hin) from rfl, a_v2167_5]
      exact acc_step d L fl tab (wL L).val (2 * t1.val + 1) (2 * k.val + 1) 1 _ hRB ⟨46, by decide⟩ ⟨3, by decide⟩ _ rfl _ hw_v2171_5 _ (k1_off107_form ..) _ _
    have a_v2239_5 : pair1_last.sl.v2239_5 d L tab k r g1 g2 hR hin = AccMath.accVec (rowF fl tab (wL L).val (2 * t1.val + 1) (2 * k.val + 1)) (offF fl (wL L).val (2 * t1.val + 1) (2 * k.val + 1)) 3 48 := by
      rw [show pair1_last.sl.v2239_5 d L tab k r g1 g2 hR hin = addf (pair1_last.sl.v2203_5 d L tab k r g1 g2 hR hin) (pair1_last.sl.v2238_5 d L tab k r g1 g2 hR hin) from rfl, a_v2203_5]
      exact acc_step d L fl tab (wL L).val (2 * t1.val + 1) (2 * k.val + 1) 1 _ hRB ⟨47, by decide⟩ ⟨3, by decide⟩ _ rfl _ hw_v2207_5 _ (k1_off108_form ..) _ _
    have a_v1604 : pair1_last.sl.v1604 d L tab k r g1 g2 hR hin = AccMath.accVec (rowF fl tab (wL L).val (2 * t1.val + 1) (2 * k.val + 1)) (offF fl (wL L).val (2 * t1.val + 1) (2 * k.val + 1)) 3 49 := by
      rw [show pair1_last.sl.v1604 d L tab k r g1 g2 hR hin = addf (pair1_last.sl.v2239_5 d L tab k r g1 g2 hR hin) (pair1_last.sl.v1603 d L tab k r g1 g2 hR hin) from rfl, a_v2239_5]
      exact acc_step d L fl tab (wL L).val (2 * t1.val + 1) (2 * k.val + 1) 1 _ hRB ⟨48, by decide⟩ ⟨3, by decide⟩ _ rfl _ hw_v1572 _ (k1_off110_form ..) _ _
    have a_v1638 : pair1_last.sl.v1638 d L tab k r g1 g2 hR hin = AccMath.accVec (rowF fl tab (wL L).val (2 * t1.val + 1) (2 * k.val + 1)) (offF fl (wL L).val (2 * t1.val + 1) (2 * k.val + 1)) 3 50 := by
      rw [show pair1_last.sl.v1638 d L tab k r g1 g2 hR hin = addf (pair1_last.sl.v1604 d L tab k r g1 g2 hR hin) (pair1_last.sl.v1637 d L tab k r g1 g2 hR hin) from rfl, a_v1604]
      exact acc_step d L fl tab (wL L).val (2 * t1.val + 1) (2 * k.val + 1) 1 _ hRB ⟨49, by decide⟩ ⟨3, by decide⟩ _ rfl _ hw_v1606 _ (k1_off111_form ..) _ _
    have hP_v1527 : ∀ x : S1x1x16.Idx, pair1_last.sl.v1527 d L tab k r g1 g2 hR hin x = Spec.bagPartial fl tab (128 * (wL L).val + 16 * (2 * t1.val + 1) + (2 * k.val)) (16 * 0 + (x 2).val) 50 := fun x => by
      show shapeCast S1x1x16 (pair1_last.sl.v1498 d L tab k r g1 g2 hR hin) _ x = _
      rw [a_v1498]
      exact payload_ok fl tab (wL L).val (2 * t1.val + 1) (2 * k.val) ⟨0, by decide⟩ _ x
    have hP_v1532 : ∀ x : S1x1x16.Idx, pair1_last.sl.v1532 d L tab k r g1 g2 hR hin x = Spec.bagPartial fl tab (128 * (wL L).val + 16 * (2 * t1.val + 1) + (2 * k.val)) (16 * 1 + (x 2).val) 50 := fun x => by
      show shapeCast S1x1x16 (pair1_last.sl.v1506 d L tab k r g1 g2 hR hin) _ x = _
      rw [a_v1506]
      exact payload_ok fl tab (wL L).val (2 * t1.val + 1) (2 * k.val) ⟨1, by decide⟩ _ x
    have hP_v1537 : ∀ x : S1x1x16.Idx, pair1_last.sl.v1537 d L tab k r g1 g2 hR hin x = Spec.bagPartial fl tab (128 * (wL L).val + 16 * (2 * t1.val + 1) + (2 * k.val)) (16 * 2 + (x 2).val) 50 := fun x => by
      show shapeCast S1x1x16 (pair1_last.sl.v1514 d L tab k r g1 g2 hR hin) _ x = _
      rw [a_v1514]
      exact payload_ok fl tab (wL L).val (2 * t1.val + 1) (2 * k.val) ⟨2, by decide⟩ _ x
    have hP_v1542 : ∀ x : S1x1x16.Idx, pair1_last.sl.v1542 d L tab k r g1 g2 hR hin x = Spec.bagPartial fl tab (128 * (wL L).val + 16 * (2 * t1.val + 1) + (2 * k.val)) (16 * 3 + (x 2).val) 50 := fun x => by
      show shapeCast S1x1x16 (pair1_last.sl.v1522 d L tab k r g1 g2 hR hin) _ x = _
      rw [a_v1522]
      exact payload_ok fl tab (wL L).val (2 * t1.val + 1) (2 * k.val) ⟨3, by decide⟩ _ x
    have hP_v1643 : ∀ x : S1x1x16.Idx, pair1_last.sl.v1643 d L tab k r g1 g2 hR hin x = Spec.bagPartial fl tab (128 * (wL L).val + 16 * (2 * t1.val + 1) + (2 * k.val + 1)) (16 * 0 + (x 2).val) 50 := fun x => by
      show shapeCast S1x1x16 (pair1_last.sl.v1614 d L tab k r g1 g2 hR hin) _ x = _
      rw [a_v1614]
      exact payload_ok fl tab (wL L).val (2 * t1.val + 1) (2 * k.val + 1) ⟨0, by decide⟩ _ x
    have hP_v1648 : ∀ x : S1x1x16.Idx, pair1_last.sl.v1648 d L tab k r g1 g2 hR hin x = Spec.bagPartial fl tab (128 * (wL L).val + 16 * (2 * t1.val + 1) + (2 * k.val + 1)) (16 * 1 + (x 2).val) 50 := fun x => by
      show shapeCast S1x1x16 (pair1_last.sl.v1622 d L tab k r g1 g2 hR hin) _ x = _
      rw [a_v1622]
      exact payload_ok fl tab (wL L).val (2 * t1.val + 1) (2 * k.val + 1) ⟨1, by decide⟩ _ x
    have hP_v1653 : ∀ x : S1x1x16.Idx, pair1_last.sl.v1653 d L tab k r g1 g2 hR hin x = Spec.bagPartial fl tab (128 * (wL L).val + 16 * (2 * t1.val + 1) + (2 * k.val + 1)) (16 * 2 + (x 2).val) 50 := fun x => by
      show shapeCast S1x1x16 (pair1_last.sl.v1630 d L tab k r g1 g2 hR hin) _ x = _
      rw [a_v1630]
      exact payload_ok fl tab (wL L).val (2 * t1.val + 1) (2 * k.val + 1) ⟨2, by decide⟩ _ x
    have hP_v1658 : ∀ x : S1x1x16.Idx, pair1_last.sl.v1658 d L tab k r g1 g2 hR hin x = Spec.bagPartial fl tab (128 * (wL L).val + 16 * (2 * t1.val + 1) + (2 * k.val + 1)) (16 * 3 + (x 2).val) 50 := fun x => by
      show shapeCast S1x1x16 (pair1_last.sl.v1638 d L tab k r g1 g2 hR hin) _ x = _
      rw [a_v1638]
      exact payload_ok fl tab (wL L).val (2 * t1.val + 1) (2 * k.val + 1) ⟨3, by decide⟩ _ x
    have hK0 := (WbV_iff_WbK d L fl tab (wL L).val (2 * t1.val + 1) 1 (2 * k.val) wb).mp hwb
    have kA := WbK_bag d L fl tab (wL L).val (2 * t1.val + 1) 1 _ wb hK0 ⟨2 * k.val, by omega⟩ (k1_off85 k) (k1_off86 k) (k1_off87 k) (k1_off88 k)
      (k1_off85_eq k) (k1_off86_eq k) (k1_off87_eq k) (k1_off88_eq k) (k1_off85_inb k) (k1_off86_inb k) (k1_off87_inb k) (k1_off88_inb k) _ _ _ _
      hP_v1527 hP_v1532 hP_v1537 hP_v1542
    have kB := WbK_bag d L fl tab (wL L).val (2 * t1.val + 1) 1 _ _ kA ⟨2 * k.val + 1, by omega⟩ (k1_off112 k) (k1_off113 k) (k1_off114 k) (k1_off115 k)
      (k1_off112_eq k) (k1_off113_eq k) (k1_off114_eq k) (k1_off115_eq k) (k1_off112_inb k) (k1_off113_inb k) (k1_off114_inb k) (k1_off115_inb k) _ _ _ _
      hP_v1643 hP_v1648 hP_v1653 hP_v1658
    rw [WbV_iff_WbK]
    intro g c hg
    have hg2 : g.val < 2 * 8 := hg
    refine kB g c ?_
    have hg' : g.val < 2 * k.val ∨ g.val = 2 * k.val ∨ g.val = 2 * k.val + 1 := by omega
    rcases hg' with h | h | h
    · exact .inl (.inl h)
    · exact .inl (.inr (Fin.ext h))
    · exact .inr (Fin.ext h)

end Tile

end Cert.Proof.Bag

end
-- ==== Proof.TilePair1.lean ====
/-
  One trip of an odd block's pair loop on a vector subcore, whatever the trip and the block: from what holds before trip `k`
  to what holds before trip `k + 1`, by cases — a trip before the last, the last trip of a block that has a successor, the
  last trip of the task's last block.
-/
import proofs.«203835_g19404662243951_cont_8to1_399_35_alg».proof.Proof.TilePre
import proofs.«203835_g19404662243951_cont_8to1_399_35_alg».proof.Proof.Pay
import proofs.«203835_g19404662243951_cont_8to1_399_35_alg».proof.Proof.TileChk
import proofs.«203835_g19404662243951_cont_8to1_399_35_alg».proof.Proof.TileMath
import proofs.«203835_g19404662243951_cont_8to1_399_35_alg».proof.Proof.TileInv
import proofs.«203835_g19404662243951_cont_8to1_399_35_alg».proof.Proof.TileInv1
import proofs.«203835_g19404662243951_cont_8to1_399_35_alg».proof.Proof.Gen.KernelIdeal.Skeleton
import proofs.«203835_g19404662243951_cont_8to1_399_35_alg».proof.Proof.TilePairVal
import proofs.«203835_g19404662243951_cont_8to1_399_35_alg».proof.Proof.TilePair1a
import proofs.«203835_g19404662243951_cont_8to1_399_35_alg».proof.Proof.TilePair1b
import proofs.«203835_g19404662243951_cont_8to1_399_35_alg».proof.Proof.TilePair1c
import Idealize.ShloMosaic.Lib.Tactic

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid1.Coords)

theorem pair1_region (fl : IVec Spec.SFlat 32) (qt : PosShare TreeShare) (tab : FVec F Spec.STab .f32) (O : CellTallies nD τ sig (HIx 1))
    (W0 : Waits sig (HIx 1)) (t1 : Fin k1_t1_loop.trips) (v1407 : BitVec 32) (k : Fin k1_t5_loop.trips) :
    inv1 d L fl qt tab O W0 (2 * t1.val + 1) k.val ⟨⟩
      ⊢ wp frame (wpE (defs₀ (F := F)) 𝒱₀ (thr d L) none) Set.univ
          (k1_t5_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10 t1 v1407 k ⟨⟩)
          (inv1 d L fl qt tab O W0 (2 * t1.val + 1) (k.val + 1)) := by
  have h8 : k.val < 8 := lt_of_lt_of_eq k.isLt trips5
  rw [inv1_flight d L fl qt tab O W0 (2 * t1.val + 1) k.val (Or.inl h8)]
  by_cases hk : k.val < 7
  · rw [inv1_flight d L fl qt tab O W0 (2 * t1.val + 1) (k.val + 1) (Or.inl (by omega))]
    exact pair1_lt d L fl qt tab O W0 t1 v1407 k hk
  · by_cases ht : t1.val < 3
    · rw [inv1_flight d L fl qt tab O W0 (2 * t1.val + 1) (k.val + 1) (Or.inr (by omega))]
      exact pair1_next d L fl qt tab O W0 t1 v1407 k hk ht
    · rw [inv1_last d L fl qt tab O W0 (2 * t1.val + 1) (k.val + 1) (by omega)]
      exact pair1_last d L fl qt tab O W0 t1 v1407 k hk ht

end Tile

end Cert.Proof.Bag

end
-- ==== Proof.TileMain.lean ====
/-
  The bag-sum kernel's body on one vector subcore, from what the task is handed to what it hands back.
-/
import proofs.«203835_g19404662243951_cont_8to1_399_35_alg».proof.Proof.TilePre
import proofs.«203835_g19404662243951_cont_8to1_399_35_alg».proof.Proof.Pay
import proofs.«203835_g19404662243951_cont_8to1_399_35_alg».proof.Proof.TileChk
import proofs.«203835_g19404662243951_cont_8to1_399_35_alg».proof.Proof.TileMath
import proofs.«203835_g19404662243951_cont_8to1_399_35_alg».proof.Proof.TileOut
import proofs.«203835_g19404662243951_cont_8to1_399_35_alg».proof.Proof.TileInv
import proofs.«203835_g19404662243951_cont_8to1_399_35_alg».proof.Proof.TileInv1
import proofs.«203835_g19404662243951_cont_8to1_399_35_alg».proof.Proof.TileSlots
import proofs.«203835_g19404662243951_cont_8to1_399_35_alg».proof.Proof.TileLand
import proofs.«203835_g19404662243951_cont_8to1_399_35_alg».proof.Proof.TileGlue
import proofs.«203835_g19404662243951_cont_8to1_399_35_alg».proof.Proof.TileInit
import proofs.«203835_g19404662243951_cont_8to1_399_35_alg».proof.Proof.TileConvSite
import proofs.«203835_g19404662243951_cont_8to1_399_35_alg».proof.Proof.TileList
import proofs.«203835_g19404662243951_cont_8to1_399_35_alg».proof.Proof.TilePair0
import proofs.«203835_g19404662243951_cont_8to1_399_35_alg».proof.Proof.TilePair1
import proofs.«203835_g19404662243951_cont_8to1_399_35_alg».proof.Proof.Gen.KernelIdeal.Skeleton
import Idealize.ShloMosaic.Lib.Tactic

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Lean Elab Tactic Meta in
/-- Reads the printed check at the head of the goal off its name and applies that check's lemma, leaving the word's fact. -/
elab "chk_disch" : tactic => withMainContext do
  let g ← getMainGoal
  let t ← instantiateMVars (← g.getType)
  let .const n _ := t.getAppFn | throwError "chk_disch: not a check"
  let .str _ last := n | throwError "chk_disch: not a check"
  unless last.startsWith "k1_chk" do throwError "chk_disch: not a check"
  let idx := last.drop 6
  let lem : Name := `Cert.Proof.TileChk ++ Name.mkSimple ("chk" ++ idx)
  evalTactic (← `(tactic| first | (refine $(mkIdent lem) ?_) | (refine $(mkIdent lem) _ ?_)))

open Lean Elab Tactic Meta in
/-- With the goal `T d L fl w b h (View.writes v Val g Lc)` — a fact of a scratch's contents after a list of stores —, adds the
    named lemma applied to the goal's own buffer, list and numbers as the hypothesis `key`. -/
elab "have_conv " n:ident : tactic => withMainContext do
  let g ← getMainGoal
  let t ← instantiateMVars (← g.getType)
  let args := t.getAppArgs
  let sz := args.size
  let wa := (args[sz - 1]!).getAppArgs
  let c ← realizeGlobalConstNoOverloadWithInfo n
  let e ← mkAppM c #[args[sz - 7]!, args[sz - 6]!, args[sz - 5]!, wa[wa.size - 2]!, wa[wa.size - 1]!, args[sz - 4]!, args[sz - 3]!, args[sz - 2]!]
  let g' ← g.assert `key (← inferType e) e
  let (_, g'') ← g'.intro1P
  replaceMainGoal [g'']

open Lean Elab Tactic Meta in
/-- With the goal `A ∧ B ∧ Po ∧ E d L fl tab b k r (View.writes … g1 L1) (View.writes … g2 L2) wb` — a pair loop's entry facts —,
    adds the named lemma applied to the goal's own buffers, lists, block number and `Po` as the hypothesis `key`. -/
elab "have_entry " n:ident : tactic => withMainContext do
  let g ← getMainGoal
  let t ← instantiateMVars (← g.getType)
  let t ← whnfR t
  let some (_, r1) := t.consumeMData.and? | throwError "have_entry: not a conjunction (1): {t}"
  let r1 ← whnfR r1
  let some (_, r2) := r1.consumeMData.and? | throwError "have_entry: not a conjunction (2): {r1}"
  let r2 ← whnfR r2
  let some (Po, E) := r2.consumeMData.and? | throwError "have_entry: not a conjunction (3): {r2}"
  let E := E.consumeMData
  let a := E.getAppArgs
  let sz := a.size
  let w1 := (a[sz - 3]!).getAppArgs
  let w2 := (a[sz - 2]!).getAppArgs
  let c ← realizeGlobalConstNoOverloadWithInfo n
  let e ← mkAppM c #[a[sz - 10]!, a[sz - 9]!, a[sz - 8]!, a[sz - 7]!, a[sz - 6]!, Po, a[sz - 4]!, w1[w1.size - 2]!, w2[w2.size - 2]!, a[sz - 1]!, w1[w1.size - 1]!, w2[w2.size - 1]!]
  let g' ← g.assert `key (← inferType e) e
  let (_, g'') ← g'.intro1P
  replaceMainGoal [g'']

variable {F : FTy → Type} [FloatOps F] [Named F]

local notation "𝕄" => MT nD τ sig (HIx 1) (Elt F) ℕ UU ℕ

section Tile

variable (d : Dev nD) (L : grid1.Coords)

theorem slot1_sub : (slot1M).view.set ⊆ (Finset.univ : Finset (Idx ((sWb : Memref sig .scVector .vmem S2x16x64 .f32).view.loc (thr d L)))) := Finset.subset_univ _

abbrev T0 : Fin k1_t1_loop.trips := ⟨0, by decide⟩
abbrev T1 : Fin k1_t1_loop.trips := ⟨1, by decide⟩
abbrev T2 : Fin k1_t1_loop.trips := ⟨2, by decide⟩
abbrev T3 : Fin k1_t1_loop.trips := ⟨3, by decide⟩

omit [FloatOps F] [Named F] in
theorem pts_blk0 (n : Fin 8) (t : Fin k1_t1_loop.trips) (h : n = ⟨2 * t.val, two_mul_lt t⟩) (f : Buf (Elt F) (oLoc d)) :
    ((oBlkM0 L t).view.loc (thr d L) ↦[(oBlkM0 L t).view.set]{fullShare} f : sProp 𝕄) = oLoc d ↦[blockSet (blkNo (wL L) n)]{fullShare} f := by
  subst h; exact pts_oBlkM0 d L t f
omit [FloatOps F] [Named F] in
theorem pts_blk1 (n : Fin 8) (t : Fin k1_t1_loop.trips) (h : n = ⟨2 * t.val + 1, two_mul_succ_lt t⟩) (f : Buf (Elt F) (oLoc d)) :
    ((oBlkM1 L t).view.loc (thr d L) ↦[(oBlkM1 L t).view.set]{fullShare} f : sProp 𝕄) = oLoc d ↦[blockSet (blkNo (wL L) n)]{fullShare} f := by
  subst h; exact pts_oBlkM1 d L t f

omit [FloatOps F] [Named F] in
theorem wb_join1 (fa fr : Buf (Elt F) ((sWb : Memref sig .scVector .vmem S2x16x64 .f32).view.loc (thr d L))) :
    iprop(((sWb : Memref sig .scVector .vmem S2x16x64 .f32).view.loc (thr d L) ↦[(slot1M).view.set]{fullShare} fa)
        ∗ ((sWb : Memref sig .scVector .vmem S2x16x64 .f32).view.loc (thr d L) ↦[Finset.univ \ (slot1M).view.set]{fullShare} fr))
      ⊢ ((sWb : Memref sig .scVector .vmem S2x16x64 .f32).view.loc (thr d L) ↦{fullShare} ((slot1M).view.set.piecewise fa fr) : sProp 𝕄) :=
  pointsTo_join_subset (slot1_sub d L)
omit [FloatOps F] [Named F] in
theorem wb_split1 (f : Buf (Elt F) ((sWb : Memref sig .scVector .vmem S2x16x64 .f32).view.loc (thr d L))) :
    ((sWb : Memref sig .scVector .vmem S2x16x64 .f32).view.loc (thr d L) ↦{fullShare} f : sProp 𝕄)
      ⊢ iprop(((sWb : Memref sig .scVector .vmem S2x16x64 .f32).view.loc (thr d L) ↦[(slot1M).view.set]{fullShare} f)
        ∗ ((sWb : Memref sig .scVector .vmem S2x16x64 .f32).view.loc (thr d L) ↦[Finset.univ \ (slot1M).view.set]{fullShare} f)) :=
  (pointsTo_split_subset (slot1_sub d L)).1

omit [FloatOps F] [Named F] in
theorem wb_join0 (fa fr : Buf (Elt F) ((sWb : Memref sig .scVector .vmem S2x16x64 .f32).view.loc (thr d L))) :
    iprop(((sWb : Memref sig .scVector .vmem S2x16x64 .f32).view.loc (thr d L) ↦[(slot0M).view.set]{fullShare} fa)
        ∗ ((sWb : Memref sig .scVector .vmem S2x16x64 .f32).view.loc (thr d L) ↦[Finset.univ \ (slot0M).view.set]{fullShare} fr))
      ⊢ ((sWb : Memref sig .scVector .vmem S2x16x64 .f32).view.loc (thr d L) ↦{fullShare} ((slot0M).view.set.piecewise fa fr) : sProp 𝕄) :=
  pointsTo_join_subset (Finset.subset_univ _)

omit [FloatOps F] [Named F] d L in
/-- A buffer's contents, named. -/
theorem pts_name {ℓ : Loc nD τ sig} {S : Finset (Idx ℓ)} {q : PosShare TreeShare} (g : Buf (Elt F) ℓ) :
    (ℓ ↦[S]{q} g : sProp 𝕄) ⊢ iprop(∃ g', ⌜g' = g⌝ ∗ (ℓ ↦[S]{q} g')) := by
  iintro H
  iexists g
  isplitr
  · ipureintro; rfl
  · iexact H

/-- A landed even block holds the bag sums (the landing's payload equation as a pure premise). -/
theorem out_vals0_i (fl : IVec Spec.SFlat 32) (tab : FVec F Spec.STab .f32) (t : Fin k1_t1_loop.trips) (fb : Buf (Elt F) (oLoc d))
    (wbc : Buf (Elt F) ((sWb : Memref sig .scVector .vmem S2x16x64 .f32).view.loc (thr d L)))
    (pay : (Rect.whole S16x64).shape.Idx → Elt F .f32) (hW : WbV d L fl tab (wL L).val (2 * t.val) 0 16 wbc) :
    iprop(⌜pay = (slot0M).view.read (Elt F) wbc⌝
        ∗ ((oBlkM0 L t).view.loc (thr d L) ↦[(oBlkM0 L t).view.set]{fullShare} (oBlkM0 L t).view.writes (Elt F) fb [⟨Rect.whole S16x64, pay⟩]))
      ⊢ (oLoc d ↦[blockSet (blkNo (wL L) ⟨2 * t.val, two_mul_lt t⟩)]{fullShare} (Spec.bagSums fl tab) : sProp 𝕄) := by
  iintro ⟨%h, H⟩
  iapply (Entails.of_eq (out_vals0 (F := F) d L fl tab t fb wbc pay h hW))
  iexact H
/-- A landed odd block holds the bag sums. -/
theorem out_vals1_i (fl : IVec Spec.SFlat 32) (tab : FVec F Spec.STab .f32) (t : Fin k1_t1_loop.trips) (fb : Buf (Elt F) (oLoc d))
    (wbc : Buf (Elt F) ((sWb : Memref sig .scVector .vmem S2x16x64 .f32).view.loc (thr d L)))
    (pay : (Rect.whole S16x64).shape.Idx → Elt F .f32) (hW : WbV d L fl tab (wL L).val (2 * t.val + 1) 1 16 wbc) :
    iprop(⌜pay = (slot1M).view.read (Elt F) wbc⌝
        ∗ ((oBlkM1 L t).view.loc (thr d L) ↦[(oBlkM1 L t).view.set]{fullShare} (oBlkM1 L t).view.writes (Elt F) fb [⟨Rect.whole S16x64, pay⟩]))
      ⊢ (oLoc d ↦[blockSet (blkNo (wL L) ⟨2 * t.val + 1, two_mul_succ_lt t⟩)]{fullShare} (Spec.bagSums fl tab) : sProp 𝕄) := by
  iintro ⟨%h, H⟩
  iapply (Entails.of_eq (out_vals1 (F := F) d L fl tab t fb wbc pay h hW))
  iexact H

set_option maxHeartbeats 4000000 in
theorem tile_body (hF : (K (F := F)).Facts) (PK : FVec F Spec.STab .f32 → Prop) (fl : IVec Spec.SFlat 32)
    (hfl : ∀ n, (fl n).toNat ≤ 999999) (qi qt : PosShare TreeShare)
    (O : CellTallies nD τ sig (HIx 1)) (W : Waits sig (HIx 1)) (hO : ∀ g, O g none = 0) :
    iprop(levAts (K (F := F)).L (K (F := F)).lev ∗ emp ∗ goA PK fl qi qt d (wL L)
        ∗ scopedBufs (thr d L) ∗ scopedSems0 (thr d L) ∗ owes (thr d L) O W)
      ⊢ wp frame (wpE (defs₀ (F := F)) 𝒱₀ (thr d L) none) Set.univ
          (cc1__sc_bag_sum_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10)
          fun _ => iprop(tdA PK fl qi qt d (wL L) ∗ scopedBufs (thr d L) ∗ scopedSems0 (thr d L)
            ∗ ∃ W', ⌜∀ p ∈ W', p ∈ W ∨ p.2 = none⌝ ∗ owes (thr d L) O W') := by
  simp only [cc1__sc_bag_sum_body_eq_skeleton]; unfold cc1__sc_bag_sum_body_skel
  rw [(K (F := F)).scopedBufs_V hF d (cV L) (jV L), SparseCore.Cfg.scopedSems0_V (Val := Elt F) d (cV L) (jV L), ownSems0_V', ownBufs_V]
  unfold goA
  iintro ⟨#Hlv, -, ⟨Hi, ⟨%tab, %hPK, Ht⟩, Hblk⟩, ⟨⟨⟨%f0, H0⟩, ⟨%f1, H1⟩, ⟨%f2, H2⟩, ⟨%f3, H3⟩, ⟨%f4, H4⟩⟩, Hbufs⟩, ⟨⟨Hg0, Hg1, Hi0, Hi1, Hw0, Hw1⟩, Hsems⟩, HO⟩
  ihave Hmw := ((K (F := F)).mayWaits_none (thr := thr d L) hO) $$ Hlv
  ihave Hi' := (Entails.of_eq (pts_iV (F := F) d L qi _).symm) $$ Hi
  ihave Ht' := (Entails.of_eq (pts_tV (F := F) d L qt _).symm) $$ Ht
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  ihave Hb := (Entails.of_eq (bigSep_fin8 (F := F) _)) $$ Hblk
  icases Hb with ⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩⟩
  ihave Hb0' := (Entails.of_eq (pts_blk0 (F := F) d L 0 T0 rfl fb0).symm) $$ Hb0
  ihave Hb1' := (Entails.of_eq (pts_blk1 (F := F) d L 1 T0 rfl fb1).symm) $$ Hb1
  ihave Hb2' := (Entails.of_eq (pts_blk0 (F := F) d L 2 T1 rfl fb2).symm) $$ Hb2
  ihave Hb3' := (Entails.of_eq (pts_blk1 (F := F) d L 3 T1 rfl fb3).symm) $$ Hb3
  ihave Hb4' := (Entails.of_eq (pts_blk0 (F := F) d L 4 T2 rfl fb4).symm) $$ Hb4
  ihave Hb5' := (Entails.of_eq (pts_blk1 (F := F) d L 5 T2 rfl fb5).symm) $$ Hb5
  ihave Hb6' := (Entails.of_eq (pts_blk0 (F := F) d L 6 T3 rfl fb6).symm) $$ Hb6
  ihave Hb7' := (Entails.of_eq (pts_blk1 (F := F) d L 7 T3 rfl fb7).symm) $$ Hb7
  sl_exec_parts
  -- the prologue's conversion of block 0: the two scratches' contents named, with what they hold
  ihave H1x := (pts_name (F := F) _) $$ H1'
  icases H1x with ⟨%g1p, %hg1p, H1'⟩
  ihave H2x := (pts_name (F := F) _) $$ H2'
  icases H2x with ⟨%g2p, %hg2p, H2'⟩
  have hP : TixV d L fl (wL L).val 0 0 g1p ∧ RvV d L fl (wL L).val 0 0 g2p := by
    -- HOLE P: the prologue's sixty-four stores of block 0's row numbers and column offsets
    subst hg1p hg2p
    refine ⟨?_, ?_⟩
    · have_conv conv_TixV
      refine key ?_ (by rfl)
      refine View.forall_pieces_cons (fun x => step_trow (F := F) L fl _ 0 (by decide) (off1_0 L) _ 0 1008 inb_S2048_S1024_0 inb_S2048_S16_1008 _ (by decide) (by decide) _ _ x) ?_
      refine View.forall_pieces_cons (fun x => step_trow (F := F) L fl _ 0 (by decide) (off1_0 L) _ 0 992 inb_S2048_S1024_0 inb_S2048_S16_992 _ (by decide) (by decide) _ _ x) ?_
      refine View.forall_pieces_cons (fun x => step_trow (F := F) L fl _ 0 (by decide) (off1_0 L) _ 0 976 inb_S2048_S1024_0 inb_S2048_S16_976 _ (by decide) (by decide) _ _ x) ?_
      refine View.forall_pieces_cons (fun x => step_trow (F := F) L fl _ 0 (by decide) (off1_0 L) _ 0 960 inb_S2048_S1024_0 inb_S2048_S16_960 _ (by decide) (by decide) _ _ x) ?_
      refine View.forall_pieces_cons (fun x => step_trow (F := F) L fl _ 0 (by decide) (off1_0 L) _ 0 944 inb_S2048_S1024_0 inb_S2048_S16_944 _ (by decide) (by decide) _ _ x) ?_
      refine View.forall_pieces_cons (fun x => step_trow (F := F) L fl _ 0 (by decide) (off1_0 L) _ 0 928 inb_S2048_S1024_0 inb_S2048_S16_928 _ (by decide) (by decide) _ _ x) ?_
      refine View.forall_pieces_cons (fun x => step_trow (F := F) L fl _ 0 (by decide) (off1_0 L) _ 0 912 inb_S2048_S1024_0 inb_S2048_S16_912 _ (by decide) (by decide) _ _ x) ?_
      refine View.forall_pieces_cons (fun x => step_trow (F := F) L fl _ 0 (by decide) (off1_0 L) _ 0 896 inb_S2048_S1024_0 inb_S2048_S16_896 _ (by decide) (by decide) _ _ x) ?_
      refine View.forall_pieces_cons (fun x => step_trow (F := F) L fl _ 0 (by decide) (off1_0 L) _ 0 880 inb_S2048_S1024_0 inb_S2048_S16_880 _ (by decide) (by decide) _ _ x) ?_
      refine View.forall_pieces_cons (fun x => step_trow (F := F) L fl _ 0 (by decide) (off1_0 L) _ 0 864 inb_S2048_S1024_0 inb_S2048_S16_864 _ (by decide) (by decide) _ _ x) ?_
      refine View.forall_pieces_cons (fun x => step_trow (F := F) L fl _ 0 (by decide) (off1_0 L) _ 0 848 inb_S2048_S1024_0 inb_S2048_S16_848 _ (by decide) (by decide) _ _ x) ?_
      refine View.forall_pieces_cons (fun x => step_trow (F := F) L fl _ 0 (by decide) (off1_0 L) _ 0 832 inb_S2048_S1024_0 inb_S2048_S16_832 _ (by decide) (by decide) _ _ x) ?_
      refine View.forall_pieces_cons (fun x => step_trow (F := F) L fl _ 0 (by decide) (off1_0 L) _ 0 816 inb_S2048_S1024_0 inb_S2048_S16_816 _ (by decide) (by decide) _ _ x) ?_
      refine View.forall_pieces_cons (fun x => step_trow (F := F) L fl _ 0 (by decide) (off1_0 L) _ 0 800 inb_S2048_S1024_0 inb_S2048_S16_800 _ (by decide) (by decide) _ _ x) ?_
      refine View.forall_pieces_cons (fun x => step_trow (F := F) L fl _ 0 (by decide) (off1_0 L) _ 0 784 inb_S2048_S1024_0 inb_S2048_S16_784 _ (by decide) (by decide) _ _ x) ?_
      refine View.forall_pieces_cons (fun x => step_trow (F := F) L fl _ 0 (by decide) (off1_0 L) _ 0 768 inb_S2048_S1024_0 inb_S2048_S16_768 _ (by decide) (by decide) _ _ x) ?_
      refine View.forall_pieces_cons (fun x => step_trow (F := F) L fl _ 0 (by decide) (off1_0 L) _ 0 752 inb_S2048_S1024_0 inb_S2048_S16_752 _ (by decide) (by decide) _ _ x) ?_
      refine View.forall_pieces_cons (fun x => step_trow (F := F) L fl _ 0 (by decide) (off1_0 L) _ 0 736 inb_S2048_S1024_0 inb_S2048_S16_736 _ (by decide) (by decide) _ _ x) ?_
      refine View.forall_pieces_cons (fun x => step_trow (F := F) L fl _ 0 (by decide) (off1_0 L) _ 0 720 inb_S2048_S1024_0 inb_S2048_S16_720 _ (by decide) (by decide) _ _ x) ?_
      refine View.forall_pieces_cons (fun x => step_trow (F := F) L fl _ 0 (by decide) (off1_0 L) _ 0 704 inb_S2048_S1024_0 inb_S2048_S16_704 _ (by decide) (by decide) _ _ x) ?_
      refine View.forall_pieces_cons (fun x => step_trow (F := F) L fl _ 0 (by decide) (off1_0 L) _ 0 688 inb_S2048_S1024_0 inb_S2048_S16_688 _ (by decide) (by decide) _ _ x) ?_
      refine View.forall_pieces_cons (fun x => step_trow (F := F) L fl _ 0 (by decide) (off1_0 L) _ 0 672 inb_S2048_S1024_0 inb_S2048_S16_672 _ (by decide) (by decide) _ _ x) ?_
      refine View.forall_pieces_cons (fun x => step_trow (F := F) L fl _ 0 (by decide) (off1_0 L) _ 0 656 inb_S2048_S1024_0 inb_S2048_S16_656 _ (by decide) (by decide) _ _ x) ?_
      refine View.forall_pieces_cons (fun x => step_trow (F := F) L fl _ 0 (by decide) (off1_0 L) _ 0 640 inb_S2048_S1024_0 inb_S2048_S16_640 _ (by decide) (by decide) _ _ x) ?_
      refine View.forall_pieces_cons (fun x => step_trow (F := F) L fl _ 0 (by decide) (off1_0 L) _ 0 624 inb_S2048_S1024_0 inb_S2048_S16_624 _ (by decide) (by decide) _ _ x) ?_
      refine View.forall_pieces_cons (fun x => step_trow (F := F) L fl _ 0 (by decide) (off1_0 L) _ 0 608 inb_S2048_S1024_0 inb_S2048_S16_608 _ (by decide) (by decide) _ _ x) ?_
      refine View.forall_pieces_cons (fun x => step_trow (F := F) L fl _ 0 (by decide) (off1_0 L) _ 0 592 inb_S2048_S1024_0 inb_S2048_S16_592 _ (by decide) (by decide) _ _ x) ?_
      refine View.forall_pieces_cons (fun x => step_trow (F := F) L fl _ 0 (by decide) (off1_0 L) _ 0 576 inb_S2048_S1024_0 inb_S2048_S16_576 _ (by decide) (by decide) _ _ x) ?_
      refine View.forall_pieces_cons (fun x => step_trow (F := F) L fl _ 0 (by decide) (off1_0 L) _ 0 560 inb_S2048_S1024_0 inb_S2048_S16_560 _ (by decide) (by decide) _ _ x) ?_
      refine View.forall_pieces_cons (fun x => step_trow (F := F) L fl _ 0 (by decide) (off1_0 L) _ 0 544 inb_S2048_S1024_0 inb_S2048_S16_544 _ (by decide) (by decide) _ _ x) ?_
      refine View.forall_pieces_cons (fun x => step_trow (F := F) L fl _ 0 (by decide) (off1_0 L) _ 0 528 inb_S2048_S1024_0 inb_S2048_S16_528 _ (by decide) (by decide) _ _ x) ?_
      refine View.forall_pieces_cons (fun x => step_trow (F := F) L fl _ 0 (by decide) (off1_0 L) _ 0 512 inb_S2048_S1024_0 inb_S2048_S16_512 _ (by decide) (by decide) _ _ x) ?_
      refine View.forall_pieces_cons (fun x => step_trow (F := F) L fl _ 0 (by decide) (off1_0 L) _ 0 496 inb_S2048_S1024_0 inb_S2048_S16_496 _ (by decide) (by decide) _ _ x) ?_
      refine View.forall_pieces_cons (fun x => step_trow (F := F) L fl _ 0 (by decide) (off1_0 L) _ 0 480 inb_S2048_S1024_0 inb_S2048_S16_480 _ (by decide) (by decide) _ _ x) ?_
      refine View.forall_pieces_cons (fun x => step_trow (F := F) L fl _ 0 (by decide) (off1_0 L) _ 0 464 inb_S2048_S1024_0 inb_S2048_S16_464 _ (by decide) (by decide) _ _ x) ?_
      refine View.forall_pieces_cons (fun x => step_trow (F := F) L fl _ 0 (by decide) (off1_0 L) _ 0 448 inb_S2048_S1024_0 inb_S2048_S16_448 _ (by decide) (by decide) _ _ x) ?_
      refine View.forall_pieces_cons (fun x => step_trow (F := F) L fl _ 0 (by decide) (off1_0 L) _ 0 432 inb_S2048_S1024_0 inb_S2048_S16_432 _ (by decide) (by decide) _ _ x) ?_
      refine View.forall_pieces_cons (fun x => step_trow (F := F) L fl _ 0 (by decide) (off1_0 L) _ 0 416 inb_S2048_S1024_0 inb_S2048_S16_416 _ (by decide) (by decide) _ _ x) ?_
      refine View.forall_pieces_cons (fun x => step_trow (F := F) L fl _ 0 (by decide) (off1_0 L) _ 0 400 inb_S2048_S1024_0 inb_S2048_S16_400 _ (by decide) (by decide) _ _ x) ?_
      refine View.forall_pieces_cons (fun x => step_trow (F := F) L fl _ 0 (by decide) (off1_0 L) _ 0 384 inb_S2048_S1024_0 inb_S2048_S16_384 _ (by decide) (by decide) _ _ x) ?_
      refine View.forall_pieces_cons (fun x => step_trow (F := F) L fl _ 0 (by decide) (off1_0 L) _ 0 368 inb_S2048_S1024_0 inb_S2048_S16_368 _ (by decide) (by decide) _ _ x) ?_
      refine View.forall_pieces_cons (fun x => step_trow (F := F) L fl _ 0 (by decide) (off1_0 L) _ 0 352 inb_S2048_S1024_0 inb_S2048_S16_352 _ (by decide) (by decide) _ _ x) ?_
      refine View.forall_pieces_cons (fun x => step_trow (F := F) L fl _ 0 (by decide) (off1_0 L) _ 0 336 inb_S2048_S1024_0 inb_S2048_S16_336 _ (by decide) (by decide) _ _ x) ?_
      refine View.forall_pieces_cons (fun x => step_trow (F := F) L fl _ 0 (by decide) (off1_0 L) _ 0 320 inb_S2048_S1024_0 inb_S2048_S16_320 _ (by decide) (by decide) _ _ x) ?_
      refine View.forall_pieces_cons (fun x => step_trow (F := F) L fl _ 0 (by decide) (off1_0 L) _ 0 304 inb_S2048_S1024_0 inb_S2048_S16_304 _ (by decide) (by decide) _ _ x) ?_
      refine View.forall_pieces_cons (fun x => step_trow (F := F) L fl _ 0 (by decide) (off1_0 L) _ 0 288 inb_S2048_S1024_0 inb_S2048_S16_288 _ (by decide) (by decide) _ _ x) ?_
      refine View.forall_pieces_cons (fun x => step_trow (F := F) L fl _ 0 (by decide) (off1_0 L) _ 0 272 inb_S2048_S1024_0 inb_S2048_S16_272 _ (by decide) (by decide) _ _ x) ?_
      refine View.forall_pieces_cons (fun x => step_trow (F := F) L fl _ 0 (by decide) (off1_0 L) _ 0 256 inb_S2048_S1024_0 inb_S2048_S16_256 _ (by decide) (by decide) _ _ x) ?_
      refine View.forall_pieces_cons (fun x => step_trow (F := F) L fl _ 0 (by decide) (off1_0 L) _ 0 240 inb_S2048_S1024_0 inb_S2048_S16_240 _ (by decide) (by decide) _ _ x) ?_
      refine View.forall_pieces_cons (fun x => step_trow (F := F) L fl _ 0 (by decide) (off1_0 L) _ 0 224 inb_S2048_S1024_0 inb_S2048_S16_224 _ (by decide) (by decide) _ _ x) ?_
      refine View.forall_pieces_cons (fun x => step_trow (F := F) L fl _ 0 (by decide) (off1_0 L) _ 0 208 inb_S2048_S1024_0 inb_S2048_S16_208 _ (by decide) (by decide) _ _ x) ?_
      refine View.forall_pieces_cons (fun x => step_trow (F := F) L fl _ 0 (by decide) (off1_0 L) _ 0 192 inb_S2048_S1024_0 inb_S2048_S16_192 _ (by decide) (by decide) _ _ x) ?_
      refine View.forall_pieces_cons (fun x => step_trow (F := F) L fl _ 0 (by decide) (off1_0 L) _ 0 176 inb_S2048_S1024_0 inb_S2048_S16_176 _ (by decide) (by decide) _ _ x) ?_
      refine View.forall_pieces_cons (fun x => step_trow (F := F) L fl _ 0 (by decide) (off1_0 L) _ 0 160 inb_S2048_S1024_0 inb_S2048_S16_160 _ (by decide) (by decide) _ _ x) ?_
      refine View.forall_pieces_cons (fun x => step_trow (F := F) L fl _ 0 (by decide) (off1_0 L) _ 0 144 inb_S2048_S1024_0 inb_S2048_S16_144 _ (by decide) (by decide) _ _ x) ?_
      refine View.forall_pieces_cons (fun x => step_trow (F := F) L fl _ 0 (by decide) (off1_0 L) _ 0 128 inb_S2048_S1024_0 inb_S2048_S16_128 _ (by decide) (by decide) _ _ x) ?_
      refine View.forall_pieces_cons (fun x => step_trow (F := F) L fl _ 0 (by decide) (off1_0 L) _ 0 112 inb_S2048_S1024_0 inb_S2048_S16_112 _ (by decide) (by decide) _ _ x) ?_
      refine View.forall_pieces_cons (fun x => step_trow (F := F) L fl _ 0 (by decide) (off1_0 L) _ 0 96 inb_S2048_S1024_0 inb_S2048_S16_96 _ (by decide) (by decide) _ _ x) ?_
      refine View.forall_pieces_cons (fun x => step_trow (F := F) L fl _ 0 (by decide) (off1_0 L) _ 0 80 inb_S2048_S1024_0 inb_S2048_S16_80 _ (by decide) (by decide) _ _ x) ?_
      refine View.forall_pieces_cons (fun x => step_trow (F := F) L fl _ 0 (by decide) (off1_0 L) _ 0 64 inb_S2048_S1024_0 inb_S2048_S16_64 _ (by decide) (by decide) _ _ x) ?_
      refine View.forall_pieces_cons (fun x => step_trow (F := F) L fl _ 0 (by decide) (off1_0 L) _ 0 48 inb_S2048_S1024_0 inb_S2048_S16_48 _ (by decide) (by decide) _ _ x) ?_
      refine View.forall_pieces_cons (fun x => step_trow (F := F) L fl _ 0 (by decide) (off1_0 L) _ 0 32 inb_S2048_S1024_0 inb_S2048_S16_32 _ (by decide) (by decide) _ _ x) ?_
      refine View.forall_pieces_cons (fun x => step_trow (F := F) L fl _ 0 (by decide) (off1_0 L) _ 0 16 inb_S2048_S1024_0 inb_S2048_S16_16 _ (by decide) (by decide) _ _ x) ?_
      refine View.forall_pieces_cons (fun x => step_trow (F := F) L fl _ 0 (by decide) (off1_0 L) _ 0 0 inb_S2048_S1024_0 inb_S2048_S16_0 _ (by decide) (by decide) _ _ x) ?_
      exact View.forall_pieces_nil
    · have_conv conv_RvV
      refine key ?_ (by rfl)
      refine View.forall_pieces_cons (fun x => step_tcol (F := F) L fl _ 0 (by decide) (off1_0 L) _ 0 1008 inb_S2048_S1024_0 inb_S2048_S16_1008 _ (by decide) (by decide) _ _ x) ?_
      refine View.forall_pieces_cons (fun x => step_tcol (F := F) L fl _ 0 (by decide) (off1_0 L) _ 0 992 inb_S2048_S1024_0 inb_S2048_S16_992 _ (by decide) (by decide) _ _ x) ?_
      refine View.forall_pieces_cons (fun x => step_tcol (F := F) L fl _ 0 (by decide) (off1_0 L) _ 0 976 inb_S2048_S1024_0 inb_S2048_S16_976 _ (by decide) (by decide) _ _ x) ?_
      refine View.forall_pieces_cons (fun x => step_tcol (F := F) L fl _ 0 (by decide) (off1_0 L) _ 0 960 inb_S2048_S1024_0 inb_S2048_S16_960 _ (by decide) (by decide) _ _ x) ?_
      refine View.forall_pieces_cons (fun x => step_tcol (F := F) L fl _ 0 (by decide) (off1_0 L) _ 0 944 inb_S2048_S1024_0 inb_S2048_S16_944 _ (by decide) (by decide) _ _ x) ?_
      refine View.forall_pieces_cons (fun x => step_tcol (F := F) L fl _ 0 (by decide) (off1_0 L) _ 0 928 inb_S2048_S1024_0 inb_S2048_S16_928 _ (by decide) (by decide) _ _ x) ?_
      refine View.forall_pieces_cons (fun x => step_tcol (F := F) L fl _ 0 (by decide) (off1_0 L) _ 0 912 inb_S2048_S1024_0 inb_S2048_S16_912 _ (by decide) (by decide) _ _ x) ?_
      refine View.forall_pieces_cons (fun x => step_tcol (F := F) L fl _ 0 (by decide) (off1_0 L) _ 0 896 inb_S2048_S1024_0 inb_S2048_S16_896 _ (by decide) (by decide) _ _ x) ?_
      refine View.forall_pieces_cons (fun x => step_tcol (F := F) L fl _ 0 (by decide) (off1_0 L) _ 0 880 inb_S2048_S1024_0 inb_S2048_S16_880 _ (by decide) (by decide) _ _ x) ?_
      refine View.forall_pieces_cons (fun x => step_tcol (F := F) L fl _ 0 (by decide) (off1_0 L) _ 0 864 inb_S2048_S1024_0 inb_S2048_S16_864 _ (by decide) (by decide) _ _ x) ?_
      refine View.forall_pieces_cons (fun x => step_tcol (F := F) L fl _ 0 (by decide) (off1_0 L) _ 0 848 inb_S2048_S1024_0 inb_S2048_S16_848 _ (by decide) (by decide) _ _ x) ?_
      refine View.forall_pieces_cons (fun x => step_tcol (F := F) L fl _ 0 (by decide) (off1_0 L) _ 0 832 inb_S2048_S1024_0 inb_S2048_S16_832 _ (by decide) (by decide) _ _ x) ?_
      refine View.forall_pieces_cons (fun x => step_tcol (F := F) L fl _ 0 (by decide) (off1_0 L) _ 0 816 inb_S2048_S1024_0 inb_S2048_S16_816 _ (by decide) (by decide) _ _ x) ?_
      refine View.forall_pieces_cons (fun x => step_tcol (F := F) L fl _ 0 (by decide) (off1_0 L) _ 0 800 inb_S2048_S1024_0 inb_S2048_S16_800 _ (by decide) (by decide) _ _ x) ?_
      refine View.forall_pieces_cons (fun x => step_tcol (F := F) L fl _ 0 (by decide) (off1_0 L) _ 0 784 inb_S2048_S1024_0 inb_S2048_S16_784 _ (by decide) (by decide) _ _ x) ?_
      refine View.forall_pieces_cons (fun x => step_tcol (F := F) L fl _ 0 (by decide) (off1_0 L) _ 0 768 inb_S2048_S1024_0 inb_S2048_S16_768 _ (by decide) (by decide) _ _ x) ?_
      refine View.forall_pieces_cons (fun x => step_tcol (F := F) L fl _ 0 (by decide) (off1_0 L) _ 0 752 inb_S2048_S1024_0 inb_S2048_S16_752 _ (by decide) (by decide) _ _ x) ?_
      refine View.forall_pieces_cons (fun x => step_tcol (F := F) L fl _ 0 (by decide) (off1_0 L) _ 0 736 inb_S2048_S1024_0 inb_S2048_S16_736 _ (by decide) (by decide) _ _ x) ?_
      refine View.forall_pieces_cons (fun x => step_tcol (F := F) L fl _ 0 (by decide) (off1_0 L) _ 0 720 inb_S2048_S1024_0 inb_S2048_S16_720 _ (by decide) (by decide) _ _ x) ?_
      refine View.forall_pieces_cons (fun x => step_tcol (F := F) L fl _ 0 (by decide) (off1_0 L) _ 0 704 inb_S2048_S1024_0 inb_S2048_S16_704 _ (by decide) (by decide) _ _ x) ?_
      refine View.forall_pieces_cons (fun x => step_tcol (F := F) L fl _ 0 (by decide) (off1_0 L) _ 0 688 inb_S2048_S1024_0 inb_S2048_S16_688 _ (by decide) (by decide) _ _ x) ?_
      refine View.forall_pieces_cons (fun x => step_tcol (F := F) L fl _ 0 (by decide) (off1_0 L) _ 0 672 inb_S2048_S1024_0 inb_S2048_S16_672 _ (by decide) (by decide) _ _ x) ?_
      refine View.forall_pieces_cons (fun x => step_tcol (F := F) L fl _ 0 (by decide) (off1_0 L) _ 0 656 inb_S2048_S1024_0 inb_S2048_S16_656 _ (by decide) (by decide) _ _ x) ?_
      refine View.forall_pieces_cons (fun x => step_tcol (F := F) L fl _ 0 (by decide) (off1_0 L) _ 0 640 inb_S2048_S1024_0 inb_S2048_S16_640 _ (by decide) (by decide) _ _ x) ?_
      refine View.forall_pieces_cons (fun x => step_tcol (F := F) L fl _ 0 (by decide) (off1_0 L) _ 0 624 inb_S2048_S1024_0 inb_S2048_S16_624 _ (by decide) (by decide) _ _ x) ?_
      refine View.forall_pieces_cons (fun x => step_tcol (F := F) L fl _ 0 (by decide) (off1_0 L) _ 0 608 inb_S2048_S1024_0 inb_S2048_S16_608 _ (by decide) (by decide) _ _ x) ?_
      refine View.forall_pieces_cons (fun x => step_tcol (F := F) L fl _ 0 (by decide) (off1_0 L) _ 0 592 inb_S2048_S1024_0 inb_S2048_S16_592 _ (by decide) (by decide) _ _ x) ?_
      refine View.forall_pieces_cons (fun x => step_tcol (F := F) L fl _ 0 (by decide) (off1_0 L) _ 0 576 inb_S2048_S1024_0 inb_S2048_S16_576 _ (by decide) (by decide) _ _ x) ?_
      refine View.forall_pieces_cons (fun x => step_tcol (F := F) L fl _ 0 (by decide) (off1_0 L) _ 0 560 inb_S2048_S1024_0 inb_S2048_S16_560 _ (by decide) (by decide) _ _ x) ?_
      refine View.forall_pieces_cons (fun x => step_tcol (F := F) L fl _ 0 (by decide) (off1_0 L) _ 0 544 inb_S2048_S1024_0 inb_S2048_S16_544 _ (by decide) (by decide) _ _ x) ?_
      refine View.forall_pieces_cons (fun x => step_tcol (F := F) L fl _ 0 (by decide) (off1_0 L) _ 0 528 inb_S2048_S1024_0 inb_S2048_S16_528 _ (by decide) (by decide) _ _ x) ?_
      refine View.forall_pieces_cons (fun x => step_tcol (F := F) L fl _ 0 (by decide) (off1_0 L) _ 0 512 inb_S2048_S1024_0 inb_S2048_S16_512 _ (by decide) (by decide) _ _ x) ?_
      refine View.forall_pieces_cons (fun x => step_tcol (F := F) L fl _ 0 (by decide) (off1_0 L) _ 0 496 inb_S2048_S1024_0 inb_S2048_S16_496 _ (by decide) (by decide) _ _ x) ?_
      refine View.forall_pieces_cons (fun x => step_tcol (F := F) L fl _ 0 (by decide) (off1_0 L) _ 0 480 inb_S2048_S1024_0 inb_S2048_S16_480 _ (by decide) (by decide) _ _ x) ?_
      refine View.forall_pieces_cons (fun x => step_tcol (F := F) L fl _ 0 (by decide) (off1_0 L) _ 0 464 inb_S2048_S1024_0 inb_S2048_S16_464 _ (by decide) (by decide) _ _ x) ?_
      refine View.forall_pieces_cons (fun x => step_tcol (F := F) L fl _ 0 (by decide) (off1_0 L) _ 0 448 inb_S2048_S1024_0 inb_S2048_S16_448 _ (by decide) (by decide) _ _ x) ?_
      refine View.forall_pieces_cons (fun x => step_tcol (F := F) L fl _ 0 (by decide) (off1_0 L) _ 0 432 inb_S2048_S1024_0 inb_S2048_S16_432 _ (by decide) (by decide) _ _ x) ?_
      refine View.forall_pieces_cons (fun x => step_tcol (F := F) L fl _ 0 (by decide) (off1_0 L) _ 0 416 inb_S2048_S1024_0 inb_S2048_S16_416 _ (by decide) (by decide) _ _ x) ?_
      refine View.forall_pieces_cons (fun x => step_tcol (F := F) L fl _ 0 (by decide) (off1_0 L) _ 0 400 inb_S2048_S1024_0 inb_S2048_S16_400 _ (by decide) (by decide) _ _ x) ?_
      refine View.forall_pieces_cons (fun x => step_tcol (F := F) L fl _ 0 (by decide) (off1_0 L) _ 0 384 inb_S2048_S1024_0 inb_S2048_S16_384 _ (by decide) (by decide) _ _ x) ?_
      refine View.forall_pieces_cons (fun x => step_tcol (F := F) L fl _ 0 (by decide) (off1_0 L) _ 0 368 inb_S2048_S1024_0 inb_S2048_S16_368 _ (by decide) (by decide) _ _ x) ?_
      refine View.forall_pieces_cons (fun x => step_tcol (F := F) L fl _ 0 (by decide) (off1_0 L) _ 0 352 inb_S2048_S1024_0 inb_S2048_S16_352 _ (by decide) (by decide) _ _ x) ?_
      refine View.forall_pieces_cons (fun x => step_tcol (F := F) L fl _ 0 (by decide) (off1_0 L) _ 0 336 inb_S2048_S1024_0 inb_S2048_S16_336 _ (by decide) (by decide) _ _ x) ?_
      refine View.forall_pieces_cons (fun x => step_tcol (F := F) L fl _ 0 (by decide) (off1_0 L) _ 0 320 inb_S2048_S1024_0 inb_S2048_S16_320 _ (by decide) (by decide) _ _ x) ?_
      refine View.forall_pieces_cons (fun x => step_tcol (F := F) L fl _ 0 (by decide) (off1_0 L) _ 0 304 inb_S2048_S1024_0 inb_S2048_S16_304 _ (by decide) (by decide) _ _ x) ?_
      refine View.forall_pieces_cons (fun x => step_tcol (F := F) L fl _ 0 (by decide) (off1_0 L) _ 0 288 inb_S2048_S1024_0 inb_S2048_S16_288 _ (by decide) (by decide) _ _ x) ?_
      refine View.forall_pieces_cons (fun x => step_tcol (F := F) L fl _ 0 (by decide) (off1_0 L) _ 0 272 inb_S2048_S1024_0 inb_S2048_S16_272 _ (by decide) (by decide) _ _ x) ?_
      refine View.forall_pieces_cons (fun x => step_tcol (F := F) L fl _ 0 (by decide) (off1_0 L) _ 0 256 inb_S2048_S1024_0 inb_S2048_S16_256 _ (by decide) (by decide) _ _ x) ?_
      refine View.forall_pieces_cons (fun x => step_tcol (F := F) L fl _ 0 (by decide) (off1_0 L) _ 0 240 inb_S2048_S1024_0 inb_S2048_S16_240 _ (by decide) (by decide) _ _ x) ?_
      refine View.forall_pieces_cons (fun x => step_tcol (F := F) L fl _ 0 (by decide) (off1_0 L) _ 0 224 inb_S2048_S1024_0 inb_S2048_S16_224 _ (by decide) (by decide) _ _ x) ?_
      refine View.forall_pieces_cons (fun x => step_tcol (F := F) L fl _ 0 (by decide) (off1_0 L) _ 0 208 inb_S2048_S1024_0 inb_S2048_S16_208 _ (by decide) (by decide) _ _ x) ?_
      refine View.forall_pieces_cons (fun x => step_tcol (F := F) L fl _ 0 (by decide) (off1_0 L) _ 0 192 inb_S2048_S1024_0 inb_S2048_S16_192 _ (by decide) (by decide) _ _ x) ?_
      refine View.forall_pieces_cons (fun x => step_tcol (F := F) L fl _ 0 (by decide) (off1_0 L) _ 0 176 inb_S2048_S1024_0 inb_S2048_S16_176 _ (by decide) (by decide) _ _ x) ?_
      refine View.forall_pieces_cons (fun x => step_tcol (F := F) L fl _ 0 (by decide) (off1_0 L) _ 0 160 inb_S2048_S1024_0 inb_S2048_S16_160 _ (by decide) (by decide) _ _ x) ?_
      refine View.forall_pieces_cons (fun x => step_tcol (F := F) L fl _ 0 (by decide) (off1_0 L) _ 0 144 inb_S2048_S1024_0 inb_S2048_S16_144 _ (by decide) (by decide) _ _ x) ?_
      refine View.forall_pieces_cons (fun x => step_tcol (F := F) L fl _ 0 (by decide) (off1_0 L) _ 0 128 inb_S2048_S1024_0 inb_S2048_S16_128 _ (by decide) (by decide) _ _ x) ?_
      refine View.forall_pieces_cons (fun x => step_tcol (F := F) L fl _ 0 (by decide) (off1_0 L) _ 0 112 inb_S2048_S1024_0 inb_S2048_S16_112 _ (by decide) (by decide) _ _ x) ?_
      refine View.forall_pieces_cons (fun x => step_tcol (F := F) L fl _ 0 (by decide) (off1_0 L) _ 0 96 inb_S2048_S1024_0 inb_S2048_S16_96 _ (by decide) (by decide) _ _ x) ?_
      refine View.forall_pieces_cons (fun x => step_tcol (F := F) L fl _ 0 (by decide) (off1_0 L) _ 0 80 inb_S2048_S1024_0 inb_S2048_S16_80 _ (by decide) (by decide) _ _ x) ?_
      refine View.forall_pieces_cons (fun x => step_tcol (F := F) L fl _ 0 (by decide) (off1_0 L) _ 0 64 inb_S2048_S1024_0 inb_S2048_S16_64 _ (by decide) (by decide) _ _ x) ?_
      refine View.forall_pieces_cons (fun x => step_tcol (F := F) L fl _ 0 (by decide) (off1_0 L) _ 0 48 inb_S2048_S1024_0 inb_S2048_S16_48 _ (by decide) (by decide) _ _ x) ?_
      refine View.forall_pieces_cons (fun x => step_tcol (F := F) L fl _ 0 (by decide) (off1_0 L) _ 0 32 inb_S2048_S1024_0 inb_S2048_S16_32 _ (by decide) (by decide) _ _ x) ?_
      refine View.forall_pieces_cons (fun x => step_tcol (F := F) L fl _ 0 (by decide) (off1_0 L) _ 0 16 inb_S2048_S1024_0 inb_S2048_S16_16 _ (by decide) (by decide) _ _ x) ?_
      refine View.forall_pieces_cons (fun x => step_tcol (F := F) L fl _ 0 (by decide) (off1_0 L) _ 0 0 inb_S2048_S1024_0 inb_S2048_S16_0 _ (by decide) (by decide) _ _ x) ?_
      exact View.forall_pieces_nil
  have hin0 : ∀ x, ((listM k1_off2 k1_off2_inb).view.read (Elt F) g1p x).toNat
      < S507904x128.size (gathers_S507904x128_S50x128).axis := hin_list0 d L fl 0 g1p hfl hP.1
  sl_exec_parts
  sl_unroll
  sl_exec_parts (disch := decide)
  -- even block 0: the write-back scratch's slot 1 set aside, the pair loop by its invariant
  ihave H4s := (wb_split1 (F := F) d L _) $$ H4'
  icases H4s with ⟨H4a, H4r⟩
  sl_for (inv0 d L fl qt tab O (insert (SemLoc.dma cc1_scratch8.sem, (default : HIx 1)) (insert (SemLoc.dma cc1_scratch7.sem, (default : HIx 1)) W)) 0) $$ [Hmw Hg0 Ht' H3' H1' H2' H4r Hg1 HO]
  case region => intro k _; exact pair0_region d L fl qt tab O _ 0#32 0#32 T0 _ k
  ·
    unfold inv0
    isplitl [Hmw]; · iexact Hmw
    iexists _; iexists _; iexists _; iexists _; iexists k1_off2; iexists k1_off2_inb
    isplitr; rotate_left
    · isplitl [Hg0]; rotate_left
      · isplitl [H1']; · iexact H1'
        isplitl [Ht']; · iexact Ht'
        isplitl [H3']; · iexact H3'
        isplitl [H2']; · iexact H2'
        isplitl [H4r]; · iexact H4r
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A0: the list's fifty words are not touched by the later stores
          intro i hi
          have hi0 := (mem_listM _ _ i).mp hi
          rw [k1_off2_eq] at hi0
          simp only [Matrix.cons_val_zero] at hi0
          exact (keep_word d L _ _ 1024 (by rfl) i (by omega)).symm
    · ipureintro
      -- HOLE B0: the values at the loop's entry
      have hRows0 : RowsV d L fl tab (wL L).val 0 (2 * 0) 0 _ :=
        RowsV_landing0 d L fl tab (by decide) (wL L).val 0 (2 * 0) g1p k1_off2 k1_off2_inb
          (words_of_TixV d L fl (wL L).val 0 0 (2 * 0) (by decide) (by decide) g1p hP.1 k1_off2 (by rw [k1_off2_eq]; rfl)) hin0 f3
      have_entry even_entry
      refine key hfl hP.1 hP.2 hRows0 ?_ (by rfl) ?_ (by rfl) (by rw [k1_off2_eq]; rfl)
      ·
        refine View.forall_pieces_cons (fun x => step_trow (F := F) L fl _ 1 (by decide) (off1_1 L) _ 1024 2032 inb_S2048_S1024_1024 inb_S2048_S16_2032 _ (by decide) (by decide) _ _ x) ?_
        refine View.forall_pieces_cons (fun x => step_trow (F := F) L fl _ 1 (by decide) (off1_1 L) _ 1024 2016 inb_S2048_S1024_1024 inb_S2048_S16_2016 _ (by decide) (by decide) _ _ x) ?_
        refine View.forall_pieces_cons (fun x => step_trow (F := F) L fl _ 1 (by decide) (off1_1 L) _ 1024 2000 inb_S2048_S1024_1024 inb_S2048_S16_2000 _ (by decide) (by decide) _ _ x) ?_
        refine View.forall_pieces_cons (fun x => step_trow (F := F) L fl _ 1 (by decide) (off1_1 L) _ 1024 1984 inb_S2048_S1024_1024 inb_S2048_S16_1984 _ (by decide) (by decide) _ _ x) ?_
        refine View.forall_pieces_cons (fun x => step_trow (F := F) L fl _ 1 (by decide) (off1_1 L) _ 1024 1968 inb_S2048_S1024_1024 inb_S2048_S16_1968 _ (by decide) (by decide) _ _ x) ?_
        refine View.forall_pieces_cons (fun x => step_trow (F := F) L fl _ 1 (by decide) (off1_1 L) _ 1024 1952 inb_S2048_S1024_1024 inb_S2048_S16_1952 _ (by decide) (by decide) _ _ x) ?_
        refine View.forall_pieces_cons (fun x => step_trow (F := F) L fl _ 1 (by decide) (off1_1 L) _ 1024 1936 inb_S2048_S1024_1024 inb_S2048_S16_1936 _ (by decide) (by decide) _ _ x) ?_
        refine View.forall_pieces_cons (fun x => step_trow (F := F) L fl _ 1 (by decide) (off1_1 L) _ 1024 1920 inb_S2048_S1024_1024 inb_S2048_S16_1920 _ (by decide) (by decide) _ _ x) ?_
        refine View.forall_pieces_cons (fun x => step_trow (F := F) L fl _ 1 (by decide) (off1_1 L) _ 1024 1904 inb_S2048_S1024_1024 inb_S2048_S16_1904 _ (by decide) (by decide) _ _ x) ?_
        refine View.forall_pieces_cons (fun x => step_trow (F := F) L fl _ 1 (by decide) (off1_1 L) _ 1024 1888 inb_S2048_S1024_1024 inb_S2048_S16_1888 _ (by decide) (by decide) _ _ x) ?_
        refine View.forall_pieces_cons (fun x => step_trow (F := F) L fl _ 1 (by decide) (off1_1 L) _ 1024 1872 inb_S2048_S1024_1024 inb_S2048_S16_1872 _ (by decide) (by decide) _ _ x) ?_
        refine View.forall_pieces_cons (fun x => step_trow (F := F) L fl _ 1 (by decide) (off1_1 L) _ 1024 1856 inb_S2048_S1024_1024 inb_S2048_S16_1856 _ (by decide) (by decide) _ _ x) ?_
        refine View.forall_pieces_cons (fun x => step_trow (F := F) L fl _ 1 (by decide) (off1_1 L) _ 1024 1840 inb_S2048_S1024_1024 inb_S2048_S16_1840 _ (by decide) (by decide) _ _ x) ?_
        refine View.forall_pieces_cons (fun x => step_trow (F := F) L fl _ 1 (by decide) (off1_1 L) _ 1024 1824 inb_S2048_S1024_1024 inb_S2048_S16_1824 _ (by decide) (by decide) _ _ x) ?_
        refine View.forall_pieces_cons (fun x => step_trow (F := F) L fl _ 1 (by decide) (off1_1 L) _ 1024 1808 inb_S2048_S1024_1024 inb_S2048_S16_1808 _ (by decide) (by decide) _ _ x) ?_
        refine View.forall_pieces_cons (fun x => step_trow (F := F) L fl _ 1 (by decide) (off1_1 L) _ 1024 1792 inb_S2048_S1024_1024 inb_S2048_S16_1792 _ (by decide) (by decide) _ _ x) ?_
        refine View.forall_pieces_cons (fun x => step_trow (F := F) L fl _ 1 (by decide) (off1_1 L) _ 1024 1776 inb_S2048_S1024_1024 inb_S2048_S16_1776 _ (by decide) (by decide) _ _ x) ?_
        refine View.forall_pieces_cons (fun x => step_trow (F := F) L fl _ 1 (by decide) (off1_1 L) _ 1024 1760 inb_S2048_S1024_1024 inb_S2048_S16_1760 _ (by decide) (by decide) _ _ x) ?_
        refine View.forall_pieces_cons (fun x => step_trow (F := F) L fl _ 1 (by decide) (off1_1 L) _ 1024 1744 inb_S2048_S1024_1024 inb_S2048_S16_1744 _ (by decide) (by decide) _ _ x) ?_
        refine View.forall_pieces_cons (fun x => step_trow (F := F) L fl _ 1 (by decide) (off1_1 L) _ 1024 1728 inb_S2048_S1024_1024 inb_S2048_S16_1728 _ (by decide) (by decide) _ _ x) ?_
        refine View.forall_pieces_cons (fun x => step_trow (F := F) L fl _ 1 (by decide) (off1_1 L) _ 1024 1712 inb_S2048_S1024_1024 inb_S2048_S16_1712 _ (by decide) (by decide) _ _ x) ?_
        refine View.forall_pieces_cons (fun x => step_trow (F := F) L fl _ 1 (by decide) (off1_1 L) _ 1024 1696 inb_S2048_S1024_1024 inb_S2048_S16_1696 _ (by decide) (by decide) _ _ x) ?_
        refine View.forall_pieces_cons (fun x => step_trow (F := F) L fl _ 1 (by decide) (off1_1 L) _ 1024 1680 inb_S2048_S1024_1024 inb_S2048_S16_1680 _ (by decide) (by decide) _ _ x) ?_
        refine View.forall_pieces_cons (fun x => step_trow (F := F) L fl _ 1 (by decide) (off1_1 L) _ 1024 1664 inb_S2048_S1024_1024 inb_S2048_S16_1664 _ (by decide) (by decide) _ _ x) ?_
        refine View.forall_pieces_cons (fun x => step_trow (F := F) L fl _ 1 (by decide) (off1_1 L) _ 1024 1648 inb_S2048_S1024_1024 inb_S2048_S16_1648 _ (by decide) (by decide) _ _ x) ?_
        refine View.forall_pieces_cons (fun x => step_trow (F := F) L fl _ 1 (by decide) (off1_1 L) _ 1024 1632 inb_S2048_S1024_1024 inb_S2048_S16_1632 _ (by decide) (by decide) _ _ x) ?_
        refine View.forall_pieces_cons (fun x => step_trow (F := F) L fl _ 1 (by decide) (off1_1 L) _ 1024 1616 inb_S2048_S1024_1024 inb_S2048_S16_1616 _ (by decide) (by decide) _ _ x) ?_
        refine View.forall_pieces_cons (fun x => step_trow (F := F) L fl _ 1 (by decide) (off1_1 L) _ 1024 1600 inb_S2048_S1024_1024 inb_S2048_S16_1600 _ (by decide) (by decide) _ _ x) ?_
        refine View.forall_pieces_cons (fun x => step_trow (F := F) L fl _ 1 (by decide) (off1_1 L) _ 1024 1584 inb_S2048_S1024_1024 inb_S2048_S16_1584 _ (by decide) (by decide) _ _ x) ?_
        refine View.forall_pieces_cons (fun x => step_trow (F := F) L fl _ 1 (by decide) (off1_1 L) _ 1024 1568 inb_S2048_S1024_1024 inb_S2048_S16_1568 _ (by decide) (by decide) _ _ x) ?_
        refine View.forall_pieces_cons (fun x => step_trow (F := F) L fl _ 1 (by decide) (off1_1 L) _ 1024 1552 inb_S2048_S1024_1024 inb_S2048_S16_1552 _ (by decide) (by decide) _ _ x) ?_
        refine View.forall_pieces_cons (fun x => step_trow (F := F) L fl _ 1 (by decide) (off1_1 L) _ 1024 1536 inb_S2048_S1024_1024 inb_S2048_S16_1536 _ (by decide) (by decide) _ _ x) ?_
        refine View.forall_pieces_cons (fun x => step_trow (F := F) L fl _ 1 (by decide) (off1_1 L) _ 1024 1520 inb_S2048_S1024_1024 inb_S2048_S16_1520 _ (by decide) (by decide) _ _ x) ?_
        refine View.forall_pieces_cons (fun x => step_trow (F := F) L fl _ 1 (by decide) (off1_1 L) _ 1024 1504 inb_S2048_S1024_1024 inb_S2048_S16_1504 _ (by decide) (by decide) _ _ x) ?_
        refine View.forall_pieces_cons (fun x => step_trow (F := F) L fl _ 1 (by decide) (off1_1 L) _ 1024 1488 inb_S2048_S1024_1024 inb_S2048_S16_1488 _ (by decide) (by decide) _ _ x) ?_
        refine View.forall_pieces_cons (fun x => step_trow (F := F) L fl _ 1 (by decide) (off1_1 L) _ 1024 1472 inb_S2048_S1024_1024 inb_S2048_S16_1472 _ (by decide) (by decide) _ _ x) ?_
        refine View.forall_pieces_cons (fun x => step_trow (F := F) L fl _ 1 (by decide) (off1_1 L) _ 1024 1456 inb_S2048_S1024_1024 inb_S2048_S16_1456 _ (by decide) (by decide) _ _ x) ?_
        refine View.forall_pieces_cons (fun x => step_trow (F := F) L fl _ 1 (by decide) (off1_1 L) _ 1024 1440 inb_S2048_S1024_1024 inb_S2048_S16_1440 _ (by decide) (by decide) _ _ x) ?_
        refine View.forall_pieces_cons (fun x => step_trow (F := F) L fl _ 1 (by decide) (off1_1 L) _ 1024 1424 inb_S2048_S1024_1024 inb_S2048_S16_1424 _ (by decide) (by decide) _ _ x) ?_
        refine View.forall_pieces_cons (fun x => step_trow (F := F) L fl _ 1 (by decide) (off1_1 L) _ 1024 1408 inb_S2048_S1024_1024 inb_S2048_S16_1408 _ (by decide) (by decide) _ _ x) ?_
        refine View.forall_pieces_cons (fun x => step_trow (F := F) L fl _ 1 (by decide) (off1_1 L) _ 1024 1392 inb_S2048_S1024_1024 inb_S2048_S16_1392 _ (by decide) (by decide) _ _ x) ?_
        refine View.forall_pieces_cons (fun x => step_trow (F := F) L fl _ 1 (by decide) (off1_1 L) _ 1024 1376 inb_S2048_S1024_1024 inb_S2048_S16_1376 _ (by decide) (by decide) _ _ x) ?_
        refine View.forall_pieces_cons (fun x => step_trow (F := F) L fl _ 1 (by decide) (off1_1 L) _ 1024 1360 inb_S2048_S1024_1024 inb_S2048_S16_1360 _ (by decide) (by decide) _ _ x) ?_
        refine View.forall_pieces_cons (fun x => step_trow (F := F) L fl _ 1 (by decide) (off1_1 L) _ 1024 1344 inb_S2048_S1024_1024 inb_S2048_S16_1344 _ (by decide) (by decide) _ _ x) ?_
        refine View.forall_pieces_cons (fun x => step_trow (F := F) L fl _ 1 (by decide) (off1_1 L) _ 1024 1328 inb_S2048_S1024_1024 inb_S2048_S16_1328 _ (by decide) (by decide) _ _ x) ?_
        refine View.forall_pieces_cons (fun x => step_trow (F := F) L fl _ 1 (by decide) (off1_1 L) _ 1024 1312 inb_S2048_S1024_1024 inb_S2048_S16_1312 _ (by decide) (by decide) _ _ x) ?_
        refine View.forall_pieces_cons (fun x => step_trow (F := F) L fl _ 1 (by decide) (off1_1 L) _ 1024 1296 inb_S2048_S1024_1024 inb_S2048_S16_1296 _ (by decide) (by decide) _ _ x) ?_
        refine View.forall_pieces_cons (fun x => step_trow (F := F) L fl _ 1 (by decide) (off1_1 L) _ 1024 1280 inb_S2048_S1024_1024 inb_S2048_S16_1280 _ (by decide) (by decide) _ _ x) ?_
        refine View.forall_pieces_cons (fun x => step_trow (F := F) L fl _ 1 (by decide) (off1_1 L) _ 1024 1264 inb_S2048_S1024_1024 inb_S2048_S16_1264 _ (by decide) (by decide) _ _ x) ?_
        refine View.forall_pieces_cons (fun x => step_trow (F := F) L fl _ 1 (by decide) (off1_1 L) _ 1024 1248 inb_S2048_S1024_1024 inb_S2048_S16_1248 _ (by decide) (by decide) _ _ x) ?_
        refine View.forall_pieces_cons (fun x => step_trow (F := F) L fl _ 1 (by decide) (off1_1 L) _ 1024 1232 inb_S2048_S1024_1024 inb_S2048_S16_1232 _ (by decide) (by decide) _ _ x) ?_
        refine View.forall_pieces_cons (fun x => step_trow (F := F) L fl _ 1 (by decide) (off1_1 L) _ 1024 1216 inb_S2048_S1024_1024 inb_S2048_S16_1216 _ (by decide) (by decide) _ _ x) ?_
        refine View.forall_pieces_cons (fun x => step_trow (F := F) L fl _ 1 (by decide) (off1_1 L) _ 1024 1200 inb_S2048_S1024_1024 inb_S2048_S16_1200 _ (by decide) (by decide) _ _ x) ?_
        refine View.forall_pieces_cons (fun x => step_trow (F := F) L fl _ 1 (by decide) (off1_1 L) _ 1024 1184 inb_S2048_S1024_1024 inb_S2048_S16_1184 _ (by decide) (by decide) _ _ x) ?_
        refine View.forall_pieces_cons (fun x => step_trow (F := F) L fl _ 1 (by decide) (off1_1 L) _ 1024 1168 inb_S2048_S1024_1024 inb_S2048_S16_1168 _ (by decide) (by decide) _ _ x) ?_
        refine View.forall_pieces_cons (fun x => step_trow (F := F) L fl _ 1 (by decide) (off1_1 L) _ 1024 1152 inb_S2048_S1024_1024 inb_S2048_S16_1152 _ (by decide) (by decide) _ _ x) ?_
        refine View.forall_pieces_cons (fun x => step_trow (F := F) L fl _ 1 (by decide) (off1_1 L) _ 1024 1136 inb_S2048_S1024_1024 inb_S2048_S16_1136 _ (by decide) (by decide) _ _ x) ?_
        refine View.forall_pieces_cons (fun x => step_trow (F := F) L fl _ 1 (by decide) (off1_1 L) _ 1024 1120 inb_S2048_S1024_1024 inb_S2048_S16_1120 _ (by decide) (by decide) _ _ x) ?_
        refine View.forall_pieces_cons (fun x => step_trow (F := F) L fl _ 1 (by decide) (off1_1 L) _ 1024 1104 inb_S2048_S1024_1024 inb_S2048_S16_1104 _ (by decide) (by decide) _ _ x) ?_
        refine View.forall_pieces_cons (fun x => step_trow (F := F) L fl _ 1 (by decide) (off1_1 L) _ 1024 1088 inb_S2048_S1024_1024 inb_S2048_S16_1088 _ (by decide) (by decide) _ _ x) ?_
        refine View.forall_pieces_cons (fun x => step_trow (F := F) L fl _ 1 (by decide) (off1_1 L) _ 1024 1072 inb_S2048_S1024_1024 inb_S2048_S16_1072 _ (by decide) (by decide) _ _ x) ?_
        refine View.forall_pieces_cons (fun x => step_trow (F := F) L fl _ 1 (by decide) (off1_1 L) _ 1024 1056 inb_S2048_S1024_1024 inb_S2048_S16_1056 _ (by decide) (by decide) _ _ x) ?_
        refine View.forall_pieces_cons (fun x => step_trow (F := F) L fl _ 1 (by decide) (off1_1 L) _ 1024 1040 inb_S2048_S1024_1024 inb_S2048_S16_1040 _ (by decide) (by decide) _ _ x) ?_
        refine View.forall_pieces_cons (fun x => step_trow (F := F) L fl _ 1 (by decide) (off1_1 L) _ 1024 1024 inb_S2048_S1024_1024 inb_S2048_S16_1024 _ (by decide) (by decide) _ _ x) ?_
        exact View.forall_pieces_nil
      ·
        refine View.forall_pieces_cons (fun x => step_tcol (F := F) L fl _ 1 (by decide) (off1_1 L) _ 1024 2032 inb_S2048_S1024_1024 inb_S2048_S16_2032 _ (by decide) (by decide) _ _ x) ?_
        refine View.forall_pieces_cons (fun x => step_tcol (F := F) L fl _ 1 (by decide) (off1_1 L) _ 1024 2016 inb_S2048_S1024_1024 inb_S2048_S16_2016 _ (by decide) (by decide) _ _ x) ?_
        refine View.forall_pieces_cons (fun x => step_tcol (F := F) L fl _ 1 (by decide) (off1_1 L) _ 1024 2000 inb_S2048_S1024_1024 inb_S2048_S16_2000 _ (by decide) (by decide) _ _ x) ?_
        refine View.forall_pieces_cons (fun x => step_tcol (F := F) L fl _ 1 (by decide) (off1_1 L) _ 1024 1984 inb_S2048_S1024_1024 inb_S2048_S16_1984 _ (by decide) (by decide) _ _ x) ?_
        refine View.forall_pieces_cons (fun x => step_tcol (F := F) L fl _ 1 (by decide) (off1_1 L) _ 1024 1968 inb_S2048_S1024_1024 inb_S2048_S16_1968 _ (by decide) (by decide) _ _ x) ?_
        refine View.forall_pieces_cons (fun x => step_tcol (F := F) L fl _ 1 (by decide) (off1_1 L) _ 1024 1952 inb_S2048_S1024_1024 inb_S2048_S16_1952 _ (by decide) (by decide) _ _ x) ?_
        refine View.forall_pieces_cons (fun x => step_tcol (F := F) L fl _ 1 (by decide) (off1_1 L) _ 1024 1936 inb_S2048_S1024_1024 inb_S2048_S16_1936 _ (by decide) (by decide) _ _ x) ?_
        refine View.forall_pieces_cons (fun x => step_tcol (F := F) L fl _ 1 (by decide) (off1_1 L) _ 1024 1920 inb_S2048_S1024_1024 inb_S2048_S16_1920 _ (by decide) (by decide) _ _ x) ?_
        refine View.forall_pieces_cons (fun x => step_tcol (F := F) L fl _ 1 (by decide) (off1_1 L) _ 1024 1904 inb_S2048_S1024_1024 inb_S2048_S16_1904 _ (by decide) (by decide) _ _ x) ?_
        refine View.forall_pieces_cons (fun x => step_tcol (F := F) L fl _ 1 (by decide) (off1_1 L) _ 1024 1888 inb_S2048_S1024_1024 inb_S2048_S16_1888 _ (by decide) (by decide) _ _ x) ?_
        refine View.forall_pieces_cons (fun x => step_tcol (F := F) L fl _ 1 (by decide) (off1_1 L) _ 1024 1872 inb_S2048_S1024_1024 inb_S2048_S16_1872 _ (by decide) (by decide) _ _ x) ?_
        refine View.forall_pieces_cons (fun x => step_tcol (F := F) L fl _ 1 (by decide) (off1_1 L) _ 1024 1856 inb_S2048_S1024_1024 inb_S2048_S16_1856 _ (by decide) (by decide) _ _ x) ?_
        refine View.forall_pieces_cons (fun x => step_tcol (F := F) L fl _ 1 (by decide) (off1_1 L) _ 1024 1840 inb_S2048_S1024_1024 inb_S2048_S16_1840 _ (by decide) (by decide) _ _ x) ?_
        refine View.forall_pieces_cons (fun x => step_tcol (F := F) L fl _ 1 (by decide) (off1_1 L) _ 1024 1824 inb_S2048_S1024_1024 inb_S2048_S16_1824 _ (by decide) (by decide) _ _ x) ?_
        refine View.forall_pieces_cons (fun x => step_tcol (F := F) L fl _ 1 (by decide) (off1_1 L) _ 1024 1808 inb_S2048_S1024_1024 inb_S2048_S16_1808 _ (by decide) (by decide) _ _ x) ?_
        refine View.forall_pieces_cons (fun x => step_tcol (F := F) L fl _ 1 (by decide) (off1_1 L) _ 1024 1792 inb_S2048_S1024_1024 inb_S2048_S16_1792 _ (by decide) (by decide) _ _ x) ?_
        refine View.forall_pieces_cons (fun x => step_tcol (F := F) L fl _ 1 (by decide) (off1_1 L) _ 1024 1776 inb_S2048_S1024_1024 inb_S2048_S16_1776 _ (by decide) (by decide) _ _ x) ?_
        refine View.forall_pieces_cons (fun x => step_tcol (F := F) L fl _ 1 (by decide) (off1_1 L) _ 1024 1760 inb_S2048_S1024_1024 inb_S2048_S16_1760 _ (by decide) (by decide) _ _ x) ?_
        refine View.forall_pieces_cons (fun x => step_tcol (F := F) L fl _ 1 (by decide) (off1_1 L) _ 1024 1744 inb_S2048_S1024_1024 inb_S2048_S16_1744 _ (by decide) (by decide) _ _ x) ?_
        refine View.forall_pieces_cons (fun x => step_tcol (F := F) L fl _ 1 (by decide) (off1_1 L) _ 1024 1728 inb_S2048_S1024_1024 inb_S2048_S16_1728 _ (by decide) (by decide) _ _ x) ?_
        refine View.forall_pieces_cons (fun x => step_tcol (F := F) L fl _ 1 (by decide) (off1_1 L) _ 1024 1712 inb_S2048_S1024_1024 inb_S2048_S16_1712 _ (by decide) (by decide) _ _ x) ?_
        refine View.forall_pieces_cons (fun x => step_tcol (F := F) L fl _ 1 (by decide) (off1_1 L) _ 1024 1696 inb_S2048_S1024_1024 inb_S2048_S16_1696 _ (by decide) (by decide) _ _ x) ?_
        refine View.forall_pieces_cons (fun x => step_tcol (F := F) L fl _ 1 (by decide) (off1_1 L) _ 1024 1680 inb_S2048_S1024_1024 inb_S2048_S16_1680 _ (by decide) (by decide) _ _ x) ?_
        refine View.forall_pieces_cons (fun x => step_tcol (F := F) L fl _ 1 (by decide) (off1_1 L) _ 1024 1664 inb_S2048_S1024_1024 inb_S2048_S16_1664 _ (by decide) (by decide) _ _ x) ?_
        refine View.forall_pieces_cons (fun x => step_tcol (F := F) L fl _ 1 (by decide) (off1_1 L) _ 1024 1648 inb_S2048_S1024_1024 inb_S2048_S16_1648 _ (by decide) (by decide) _ _ x) ?_
        refine View.forall_pieces_cons (fun x => step_tcol (F := F) L fl _ 1 (by decide) (off1_1 L) _ 1024 1632 inb_S2048_S1024_1024 inb_S2048_S16_1632 _ (by decide) (by decide) _ _ x) ?_
        refine View.forall_pieces_cons (fun x => step_tcol (F := F) L fl _ 1 (by decide) (off1_1 L) _ 1024 1616 inb_S2048_S1024_1024 inb_S2048_S16_1616 _ (by decide) (by decide) _ _ x) ?_
        refine View.forall_pieces_cons (fun x => step_tcol (F := F) L fl _ 1 (by decide) (off1_1 L) _ 1024 1600 inb_S2048_S1024_1024 inb_S2048_S16_1600 _ (by decide) (by decide) _ _ x) ?_
        refine View.forall_pieces_cons (fun x => step_tcol (F := F) L fl _ 1 (by decide) (off1_1 L) _ 1024 1584 inb_S2048_S1024_1024 inb_S2048_S16_1584 _ (by decide) (by decide) _ _ x) ?_
        refine View.forall_pieces_cons (fun x => step_tcol (F := F) L fl _ 1 (by decide) (off1_1 L) _ 1024 1568 inb_S2048_S1024_1024 inb_S2048_S16_1568 _ (by decide) (by decide) _ _ x) ?_
        refine View.forall_pieces_cons (fun x => step_tcol (F := F) L fl _ 1 (by decide) (off1_1 L) _ 1024 1552 inb_S2048_S1024_1024 inb_S2048_S16_1552 _ (by decide) (by decide) _ _ x) ?_
        refine View.forall_pieces_cons (fun x => step_tcol (F := F) L fl _ 1 (by decide) (off1_1 L) _ 1024 1536 inb_S2048_S1024_1024 inb_S2048_S16_1536 _ (by decide) (by decide) _ _ x) ?_
        refine View.forall_pieces_cons (fun x => step_tcol (F := F) L fl _ 1 (by decide) (off1_1 L) _ 1024 1520 inb_S2048_S1024_1024 inb_S2048_S16_1520 _ (by decide) (by decide) _ _ x) ?_
        refine View.forall_pieces_cons (fun x => step_tcol (F := F) L fl _ 1 (by decide) (off1_1 L) _ 1024 1504 inb_S2048_S1024_1024 inb_S2048_S16_1504 _ (by decide) (by decide) _ _ x) ?_
        refine View.forall_pieces_cons (fun x => step_tcol (F := F) L fl _ 1 (by decide) (off1_1 L) _ 1024 1488 inb_S2048_S1024_1024 inb_S2048_S16_1488 _ (by decide) (by decide) _ _ x) ?_
        refine View.forall_pieces_cons (fun x => step_tcol (F := F) L fl _ 1 (by decide) (off1_1 L) _ 1024 1472 inb_S2048_S1024_1024 inb_S2048_S16_1472 _ (by decide) (by decide) _ _ x) ?_
        refine View.forall_pieces_cons (fun x => step_tcol (F := F) L fl _ 1 (by decide) (off1_1 L) _ 1024 1456 inb_S2048_S1024_1024 inb_S2048_S16_1456 _ (by decide) (by decide) _ _ x) ?_
        refine View.forall_pieces_cons (fun x => step_tcol (F := F) L fl _ 1 (by decide) (off1_1 L) _ 1024 1440 inb_S2048_S1024_1024 inb_S2048_S16_1440 _ (by decide) (by decide) _ _ x) ?_
        refine View.forall_pieces_cons (fun x => step_tcol (F := F) L fl _ 1 (by decide) (off1_1 L) _ 1024 1424 inb_S2048_S1024_1024 inb_S2048_S16_1424 _ (by decide) (by decide) _ _ x) ?_
        refine View.forall_pieces_cons (fun x => step_tcol (F := F) L fl _ 1 (by decide) (off1_1 L) _ 1024 1408 inb_S2048_S1024_1024 inb_S2048_S16_1408 _ (by decide) (by decide) _ _ x) ?_
        refine View.forall_pieces_cons (fun x => step_tcol (F := F) L fl _ 1 (by decide) (off1_1 L) _ 1024 1392 inb_S2048_S1024_1024 inb_S2048_S16_1392 _ (by decide) (by decide) _ _ x) ?_
        refine View.forall_pieces_cons (fun x => step_tcol (F := F) L fl _ 1 (by decide) (off1_1 L) _ 1024 1376 inb_S2048_S1024_1024 inb_S2048_S16_1376 _ (by decide) (by decide) _ _ x) ?_
        refine View.forall_pieces_cons (fun x => step_tcol (F := F) L fl _ 1 (by decide) (off1_1 L) _ 1024 1360 inb_S2048_S1024_1024 inb_S2048_S16_1360 _ (by decide) (by decide) _ _ x) ?_
        refine View.forall_pieces_cons (fun x => step_tcol (F := F) L fl _ 1 (by decide) (off1_1 L) _ 1024 1344 inb_S2048_S1024_1024 inb_S2048_S16_1344 _ (by decide) (by decide) _ _ x) ?_
        refine View.forall_pieces_cons (fun x => step_tcol (F := F) L fl _ 1 (by decide) (off1_1 L) _ 1024 1328 inb_S2048_S1024_1024 inb_S2048_S16_1328 _ (by decide) (by decide) _ _ x) ?_
        refine View.forall_pieces_cons (fun x => step_tcol (F := F) L fl _ 1 (by decide) (off1_1 L) _ 1024 1312 inb_S2048_S1024_1024 inb_S2048_S16_1312 _ (by decide) (by decide) _ _ x) ?_
        refine View.forall_pieces_cons (fun x => step_tcol (F := F) L fl _ 1 (by decide) (off1_1 L) _ 1024 1296 inb_S2048_S1024_1024 inb_S2048_S16_1296 _ (by decide) (by decide) _ _ x) ?_
        refine View.forall_pieces_cons (fun x => step_tcol (F := F) L fl _ 1 (by decide) (off1_1 L) _ 1024 1280 inb_S2048_S1024_1024 inb_S2048_S16_1280 _ (by decide) (by decide) _ _ x) ?_
        refine View.forall_pieces_cons (fun x => step_tcol (F := F) L fl _ 1 (by decide) (off1_1 L) _ 1024 1264 inb_S2048_S1024_1024 inb_S2048_S16_1264 _ (by decide) (by decide) _ _ x) ?_
        refine View.forall_pieces_cons (fun x => step_tcol (F := F) L fl _ 1 (by decide) (off1_1 L) _ 1024 1248 inb_S2048_S1024_1024 inb_S2048_S16_1248 _ (by decide) (by decide) _ _ x) ?_
        refine View.forall_pieces_cons (fun x => step_tcol (F := F) L fl _ 1 (by decide) (off1_1 L) _ 1024 1232 inb_S2048_S1024_1024 inb_S2048_S16_1232 _ (by decide) (by decide) _ _ x) ?_
        refine View.forall_pieces_cons (fun x => step_tcol (F := F) L fl _ 1 (by decide) (off1_1 L) _ 1024 1216 inb_S2048_S1024_1024 inb_S2048_S16_1216 _ (by decide) (by decide) _ _ x) ?_
        refine View.forall_pieces_cons (fun x => step_tcol (F := F) L fl _ 1 (by decide) (off1_1 L) _ 1024 1200 inb_S2048_S1024_1024 inb_S2048_S16_1200 _ (by decide) (by decide) _ _ x) ?_
        refine View.forall_pieces_cons (fun x => step_tcol (F := F) L fl _ 1 (by decide) (off1_1 L) _ 1024 1184 inb_S2048_S1024_1024 inb_S2048_S16_1184 _ (by decide) (by decide) _ _ x) ?_
        refine View.forall_pieces_cons (fun x => step_tcol (F := F) L fl _ 1 (by decide) (off1_1 L) _ 1024 1168 inb_S2048_S1024_1024 inb_S2048_S16_1168 _ (by decide) (by decide) _ _ x) ?_
        refine View.forall_pieces_cons (fun x => step_tcol (F := F) L fl _ 1 (by decide) (off1_1 L) _ 1024 1152 inb_S2048_S1024_1024 inb_S2048_S16_1152 _ (by decide) (by decide) _ _ x) ?_
        refine View.forall_pieces_cons (fun x => step_tcol (F := F) L fl _ 1 (by decide) (off1_1 L) _ 1024 1136 inb_S2048_S1024_1024 inb_S2048_S16_1136 _ (by decide) (by decide) _ _ x) ?_
        refine View.forall_pieces_cons (fun x => step_tcol (F := F) L fl _ 1 (by decide) (off1_1 L) _ 1024 1120 inb_S2048_S1024_1024 inb_S2048_S16_1120 _ (by decide) (by decide) _ _ x) ?_
        refine View.forall_pieces_cons (fun x => step_tcol (F := F) L fl _ 1 (by decide) (off1_1 L) _ 1024 1104 inb_S2048_S1024_1024 inb_S2048_S16_1104 _ (by decide) (by decide) _ _ x) ?_
        refine View.forall_pieces_cons (fun x => step_tcol (F := F) L fl _ 1 (by decide) (off1_1 L) _ 1024 1088 inb_S2048_S1024_1024 inb_S2048_S16_1088 _ (by decide) (by decide) _ _ x) ?_
        refine View.forall_pieces_cons (fun x => step_tcol (F := F) L fl _ 1 (by decide) (off1_1 L) _ 1024 1072 inb_S2048_S1024_1024 inb_S2048_S16_1072 _ (by decide) (by decide) _ _ x) ?_
        refine View.forall_pieces_cons (fun x => step_tcol (F := F) L fl _ 1 (by decide) (off1_1 L) _ 1024 1056 inb_S2048_S1024_1024 inb_S2048_S16_1056 _ (by decide) (by decide) _ _ x) ?_
        refine View.forall_pieces_cons (fun x => step_tcol (F := F) L fl _ 1 (by decide) (off1_1 L) _ 1024 1040 inb_S2048_S1024_1024 inb_S2048_S16_1040 _ (by decide) (by decide) _ _ x) ?_
        refine View.forall_pieces_cons (fun x => step_tcol (F := F) L fl _ 1 (by decide) (off1_1 L) _ 1024 1024 inb_S2048_S1024_1024 inb_S2048_S16_1024 _ (by decide) (by decide) _ _ x) ?_
        exact View.forall_pieces_nil
  iintro %_ HI
  unfold inv0
  icases HI with ⟨-, %r, %g1, %g2, %wb, %o, %ho, ⟨%hT, %hR, %ho_eq, %hV⟩, Hg0, H1, Ht, H3, H2, H4r, Hg1, %W', %hW', HO⟩
  ihave H4' := (wb_join1 (F := F) d L _ _) $$ [H4a H4r]
  · isplitl [H4a] <;> iassumption
  have e8 : lo 8 = ![1024] := by unfold lo; rfl
  obtain rfl : o = ![1024] := ho_eq.trans e8
  have hin := hin_of d L g1 hT
  sl_exec_parts (disch := decide)
  -- odd block 1
  sl_for (inv1 d L fl qt tab O (insert (SemLoc.dma cc1_scratch7.sem, (default : HIx 1)) W') 1) $$ [Hmw Hg0 Ht H3 H1 H2 H4' Hg1 HO]
  case region => intro k _; exact pair1_region d L fl qt tab O _ T0 _ k
  · rw [inv1_flight (F := F) d L fl qt tab O _ 1 _ (Or.inl (by decide))]
    unfold invF
    isplitl [Hmw]; · iexact Hmw
    iexists _; iexists _; iexists _; iexists _; iexists ![1024]; iexists ho
    isplitr; rotate_left
    · isplitl [Hg0]; rotate_left
      · isplitl [H1]; · iexact H1
        isplitl [Ht]; · iexact Ht
        isplitl [H3]; · iexact H3
        isplitl [H2]; · iexact H2
        isplitl [H4']; · iexact H4'
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A1: the list's fifty words are not touched by the later stores
          intro i hi
          have hi0 := (mem_listM _ _ i).mp hi
          simp only [Matrix.cons_val_zero] at hi0
          exact (keep_word d L _ _ 0 (by rfl) i (by omega)).symm
    · ipureintro
      -- HOLE B1: the values at the loop's entry
      obtain ⟨hTh, hRh, hRowsh⟩ := even_to_odd d L fl tab 0 _ _ _ _ hV
      have_entry odd_entry
      refine key hfl hTh hRh hRowsh ?_ (by rfl) ?_ (by rfl) (by unfold lo1; rfl)
      ·
        refine View.forall_pieces_cons (fun x => step_trow (F := F) L fl _ 2 (by decide) (off5_blk L T0) _ 0 1008 inb_S2048_S1024_0 inb_S2048_S16_1008 _ (by decide) (by decide) _ _ x) ?_
        refine View.forall_pieces_cons (fun x => step_trow (F := F) L fl _ 2 (by decide) (off5_blk L T0) _ 0 992 inb_S2048_S1024_0 inb_S2048_S16_992 _ (by decide) (by decide) _ _ x) ?_
        refine View.forall_pieces_cons (fun x => step_trow (F := F) L fl _ 2 (by decide) (off5_blk L T0) _ 0 976 inb_S2048_S1024_0 inb_S2048_S16_976 _ (by decide) (by decide) _ _ x) ?_
        refine View.forall_pieces_cons (fun x => step_trow (F := F) L fl _ 2 (by decide) (off5_blk L T0) _ 0 960 inb_S2048_S1024_0 inb_S2048_S16_960 _ (by decide) (by decide) _ _ x) ?_
        refine View.forall_pieces_cons (fun x => step_trow (F := F) L fl _ 2 (by decide) (off5_blk L T0) _ 0 944 inb_S2048_S1024_0 inb_S2048_S16_944 _ (by decide) (by decide) _ _ x) ?_
        refine View.forall_pieces_cons (fun x => step_trow (F := F) L fl _ 2 (by decide) (off5_blk L T0) _ 0 928 inb_S2048_S1024_0 inb_S2048_S16_928 _ (by decide) (by decide) _ _ x) ?_
        refine View.forall_pieces_cons (fun x => step_trow (F := F) L fl _ 2 (by decide) (off5_blk L T0) _ 0 912 inb_S2048_S1024_0 inb_S2048_S16_912 _ (by decide) (by decide) _ _ x) ?_
        refine View.forall_pieces_cons (fun x => step_trow (F := F) L fl _ 2 (by decide) (off5_blk L T0) _ 0 896 inb_S2048_S1024_0 inb_S2048_S16_896 _ (by decide) (by decide) _ _ x) ?_
        refine View.forall_pieces_cons (fun x => step_trow (F := F) L fl _ 2 (by decide) (off5_blk L T0) _ 0 880 inb_S2048_S1024_0 inb_S2048_S16_880 _ (by decide) (by decide) _ _ x) ?_
        refine View.forall_pieces_cons (fun x => step_trow (F := F) L fl _ 2 (by decide) (off5_blk L T0) _ 0 864 inb_S2048_S1024_0 inb_S2048_S16_864 _ (by decide) (by decide) _ _ x) ?_
        refine View.forall_pieces_cons (fun x => step_trow (F := F) L fl _ 2 (by decide) (off5_blk L T0) _ 0 848 inb_S2048_S1024_0 inb_S2048_S16_848 _ (by decide) (by decide) _ _ x) ?_
        refine View.forall_pieces_cons (fun x => step_trow (F := F) L fl _ 2 (by decide) (off5_blk L T0) _ 0 832 inb_S2048_S1024_0 inb_S2048_S16_832 _ (by decide) (by decide) _ _ x) ?_
        refine View.forall_pieces_cons (fun x => step_trow (F := F) L fl _ 2 (by decide) (off5_blk L T0) _ 0 816 inb_S2048_S1024_0 inb_S2048_S16_816 _ (by decide) (by decide) _ _ x) ?_
        refine View.forall_pieces_cons (fun x => step_trow (F := F) L fl _ 2 (by decide) (off5_blk L T0) _ 0 800 inb_S2048_S1024_0 inb_S2048_S16_800 _ (by decide) (by decide) _ _ x) ?_
        refine View.forall_pieces_cons (fun x => step_trow (F := F) L fl _ 2 (by decide) (off5_blk L T0) _ 0 784 inb_S2048_S1024_0 inb_S2048_S16_784 _ (by decide) (by decide) _ _ x) ?_
        refine View.forall_pieces_cons (fun x => step_trow (F := F) L fl _ 2 (by decide) (off5_blk L T0) _ 0 768 inb_S2048_S1024_0 inb_S2048_S16_768 _ (by decide) (by decide) _ _ x) ?_
        refine View.forall_pieces_cons (fun x => step_trow (F := F) L fl _ 2 (by decide) (off5_blk L T0) _ 0 752 inb_S2048_S1024_0 inb_S2048_S16_752 _ (by decide) (by decide) _ _ x) ?_
        refine View.forall_pieces_cons (fun x => step_trow (F := F) L fl _ 2 (by decide) (off5_blk L T0) _ 0 736 inb_S2048_S1024_0 inb_S2048_S16_736 _ (by decide) (by decide) _ _ x) ?_
        refine View.forall_pieces_cons (fun x => step_trow (F := F) L fl _ 2 (by decide) (off5_blk L T0) _ 0 720 inb_S2048_S1024_0 inb_S2048_S16_720 _ (by decide) (by decide) _ _ x) ?_
        refine View.forall_pieces_cons (fun x => step_trow (F := F) L fl _ 2 (by decide) (off5_blk L T0) _ 0 704 inb_S2048_S1024_0 inb_S2048_S16_704 _ (by decide) (by decide) _ _ x) ?_
        refine View.forall_pieces_cons (fun x => step_trow (F := F) L fl _ 2 (by decide) (off5_blk L T0) _ 0 688 inb_S2048_S1024_0 inb_S2048_S16_688 _ (by decide) (by decide) _ _ x) ?_
        refine View.forall_pieces_cons (fun x => step_trow (F := F) L fl _ 2 (by decide) (off5_blk L T0) _ 0 672 inb_S2048_S1024_0 inb_S2048_S16_672 _ (by decide) (by decide) _ _ x) ?_
        refine View.forall_pieces_cons (fun x => step_trow (F := F) L fl _ 2 (by decide) (off5_blk L T0) _ 0 656 inb_S2048_S1024_0 inb_S2048_S16_656 _ (by decide) (by decide) _ _ x) ?_
        refine View.forall_pieces_cons (fun x => step_trow (F := F) L fl _ 2 (by decide) (off5_blk L T0) _ 0 640 inb_S2048_S1024_0 inb_S2048_S16_640 _ (by decide) (by decide) _ _ x) ?_
        refine View.forall_pieces_cons (fun x => step_trow (F := F) L fl _ 2 (by decide) (off5_blk L T0) _ 0 624 inb_S2048_S1024_0 inb_S2048_S16_624 _ (by decide) (by decide) _ _ x) ?_
        refine View.forall_pieces_cons (fun x => step_trow (F := F) L fl _ 2 (by decide) (off5_blk L T0) _ 0 608 inb_S2048_S1024_0 inb_S2048_S16_608 _ (by decide) (by decide) _ _ x) ?_
        refine View.forall_pieces_cons (fun x => step_trow (F := F) L fl _ 2 (by decide) (off5_blk L T0) _ 0 592 inb_S2048_S1024_0 inb_S2048_S16_592 _ (by decide) (by decide) _ _ x) ?_
        refine View.forall_pieces_cons (fun x => step_trow (F := F) L fl _ 2 (by decide) (off5_blk L T0) _ 0 576 inb_S2048_S1024_0 inb_S2048_S16_576 _ (by decide) (by decide) _ _ x) ?_
        refine View.forall_pieces_cons (fun x => step_trow (F := F) L fl _ 2 (by decide) (off5_blk L T0) _ 0 560 inb_S2048_S1024_0 inb_S2048_S16_560 _ (by decide) (by decide) _ _ x) ?_
        refine View.forall_pieces_cons (fun x => step_trow (F := F) L fl _ 2 (by decide) (off5_blk L T0) _ 0 544 inb_S2048_S1024_0 inb_S2048_S16_544 _ (by decide) (by decide) _ _ x) ?_
        refine View.forall_pieces_cons (fun x => step_trow (F := F) L fl _ 2 (by decide) (off5_blk L T0) _ 0 528 inb_S2048_S1024_0 inb_S2048_S16_528 _ (by decide) (by decide) _ _ x) ?_
        refine View.forall_pieces_cons (fun x => step_trow (F := F) L fl _ 2 (by decide) (off5_blk L T0) _ 0 512 inb_S2048_S1024_0 inb_S2048_S16_512 _ (by decide) (by decide) _ _ x) ?_
        refine View.forall_pieces_cons (fun x => step_trow (F := F) L fl _ 2 (by decide) (off5_blk L T0) _ 0 496 inb_S2048_S1024_0 inb_S2048_S16_496 _ (by decide) (by decide) _ _ x) ?_
        refine View.forall_pieces_cons (fun x => step_trow (F := F) L fl _ 2 (by decide) (off5_blk L T0) _ 0 480 inb_S2048_S1024_0 inb_S2048_S16_480 _ (by decide) (by decide) _ _ x) ?_
        refine View.forall_pieces_cons (fun x => step_trow (F := F) L fl _ 2 (by decide) (off5_blk L T0) _ 0 464 inb_S2048_S1024_0 inb_S2048_S16_464 _ (by decide) (by decide) _ _ x) ?_
        refine View.forall_pieces_cons (fun x => step_trow (F := F) L fl _ 2 (by decide) (off5_blk L T0) _ 0 448 inb_S2048_S1024_0 inb_S2048_S16_448 _ (by decide) (by decide) _ _ x) ?_
        refine View.forall_pieces_cons (fun x => step_trow (F := F) L fl _ 2 (by decide) (off5_blk L T0) _ 0 432 inb_S2048_S1024_0 inb_S2048_S16_432 _ (by decide) (by decide) _ _ x) ?_
        refine View.forall_pieces_cons (fun x => step_trow (F := F) L fl _ 2 (by decide) (off5_blk L T0) _ 0 416 inb_S2048_S1024_0 inb_S2048_S16_416 _ (by decide) (by decide) _ _ x) ?_
        refine View.forall_pieces_cons (fun x => step_trow (F := F) L fl _ 2 (by decide) (off5_blk L T0) _ 0 400 inb_S2048_S1024_0 inb_S2048_S16_400 _ (by decide) (by decide) _ _ x) ?_
        refine View.forall_pieces_cons (fun x => step_trow (F := F) L fl _ 2 (by decide) (off5_blk L T0) _ 0 384 inb_S2048_S1024_0 inb_S2048_S16_384 _ (by decide) (by decide) _ _ x) ?_
        refine View.forall_pieces_cons (fun x => step_trow (F := F) L fl _ 2 (by decide) (off5_blk L T0) _ 0 368 inb_S2048_S1024_0 inb_S2048_S16_368 _ (by decide) (by decide) _ _ x) ?_
        refine View.forall_pieces_cons (fun x => step_trow (F := F) L fl _ 2 (by decide) (off5_blk L T0) _ 0 352 inb_S2048_S1024_0 inb_S2048_S16_352 _ (by decide) (by decide) _ _ x) ?_
        refine View.forall_pieces_cons (fun x => step_trow (F := F) L fl _ 2 (by decide) (off5_blk L T0) _ 0 336 inb_S2048_S1024_0 inb_S2048_S16_336 _ (by decide) (by decide) _ _ x) ?_
        refine View.forall_pieces_cons (fun x => step_trow (F := F) L fl _ 2 (by decide) (off5_blk L T0) _ 0 320 inb_S2048_S1024_0 inb_S2048_S16_320 _ (by decide) (by decide) _ _ x) ?_
        refine View.forall_pieces_cons (fun x => step_trow (F := F) L fl _ 2 (by decide) (off5_blk L T0) _ 0 304 inb_S2048_S1024_0 inb_S2048_S16_304 _ (by decide) (by decide) _ _ x) ?_
        refine View.forall_pieces_cons (fun x => step_trow (F := F) L fl _ 2 (by decide) (off5_blk L T0) _ 0 288 inb_S2048_S1024_0 inb_S2048_S16_288 _ (by decide) (by decide) _ _ x) ?_
        refine View.forall_pieces_cons (fun x => step_trow (F := F) L fl _ 2 (by decide) (off5_blk L T0) _ 0 272 inb_S2048_S1024_0 inb_S2048_S16_272 _ (by decide) (by decide) _ _ x) ?_
        refine View.forall_pieces_cons (fun x => step_trow (F := F) L fl _ 2 (by decide) (off5_blk L T0) _ 0 256 inb_S2048_S1024_0 inb_S2048_S16_256 _ (by decide) (by decide) _ _ x) ?_
        refine View.forall_pieces_cons (fun x => step_trow (F := F) L fl _ 2 (by decide) (off5_blk L T0) _ 0 240 inb_S2048_S1024_0 inb_S2048_S16_240 _ (by decide) (by decide) _ _ x) ?_
        refine View.forall_pieces_cons (fun x => step_trow (F := F) L fl _ 2 (by decide) (off5_blk L T0) _ 0 224 inb_S2048_S1024_0 inb_S2048_S16_224 _ (by decide) (by decide) _ _ x) ?_
        refine View.forall_pieces_cons (fun x => step_trow (F := F) L fl _ 2 (by decide) (off5_blk L T0) _ 0 208 inb_S2048_S1024_0 inb_S2048_S16_208 _ (by decide) (by decide) _ _ x) ?_
        refine View.forall_pieces_cons (fun x => step_trow (F := F) L fl _ 2 (by decide) (off5_blk L T0) _ 0 192 inb_S2048_S1024_0 inb_S2048_S16_192 _ (by decide) (by decide) _ _ x) ?_
        refine View.forall_pieces_cons (fun x => step_trow (F := F) L fl _ 2 (by decide) (off5_blk L T0) _ 0 176 inb_S2048_S1024_0 inb_S2048_S16_176 _ (by decide) (by decide) _ _ x) ?_
        refine View.forall_pieces_cons (fun x => step_trow (F := F) L fl _ 2 (by decide) (off5_blk L T0) _ 0 160 inb_S2048_S1024_0 inb_S2048_S16_160 _ (by decide) (by decide) _ _ x) ?_
        refine View.forall_pieces_cons (fun x => step_trow (F := F) L fl _ 2 (by decide) (off5_blk L T0) _ 0 144 inb_S2048_S1024_0 inb_S2048_S16_144 _ (by decide) (by decide) _ _ x) ?_
        refine View.forall_pieces_cons (fun x => step_trow (F := F) L fl _ 2 (by decide) (off5_blk L T0) _ 0 128 inb_S2048_S1024_0 inb_S2048_S16_128 _ (by decide) (by decide) _ _ x) ?_
        refine View.forall_pieces_cons (fun x => step_trow (F := F) L fl _ 2 (by decide) (off5_blk L T0) _ 0 112 inb_S2048_S1024_0 inb_S2048_S16_112 _ (by decide) (by decide) _ _ x) ?_
        refine View.forall_pieces_cons (fun x => step_trow (F := F) L fl _ 2 (by decide) (off5_blk L T0) _ 0 96 inb_S2048_S1024_0 inb_S2048_S16_96 _ (by decide) (by decide) _ _ x) ?_
        refine View.forall_pieces_cons (fun x => step_trow (F := F) L fl _ 2 (by decide) (off5_blk L T0) _ 0 80 inb_S2048_S1024_0 inb_S2048_S16_80 _ (by decide) (by decide) _ _ x) ?_
        refine View.forall_pieces_cons (fun x => step_trow (F := F) L fl _ 2 (by decide) (off5_blk L T0) _ 0 64 inb_S2048_S1024_0 inb_S2048_S16_64 _ (by decide) (by decide) _ _ x) ?_
        refine View.forall_pieces_cons (fun x => step_trow (F := F) L fl _ 2 (by decide) (off5_blk L T0) _ 0 48 inb_S2048_S1024_0 inb_S2048_S16_48 _ (by decide) (by decide) _ _ x) ?_
        refine View.forall_pieces_cons (fun x => step_trow (F := F) L fl _ 2 (by decide) (off5_blk L T0) _ 0 32 inb_S2048_S1024_0 inb_S2048_S16_32 _ (by decide) (by decide) _ _ x) ?_
        refine View.forall_pieces_cons (fun x => step_trow (F := F) L fl _ 2 (by decide) (off5_blk L T0) _ 0 16 inb_S2048_S1024_0 inb_S2048_S16_16 _ (by decide) (by decide) _ _ x) ?_
        refine View.forall_pieces_cons (fun x => step_trow (F := F) L fl _ 2 (by decide) (off5_blk L T0) _ 0 0 inb_S2048_S1024_0 inb_S2048_S16_0 _ (by decide) (by decide) _ _ x) ?_
        exact View.forall_pieces_nil
      ·
        refine View.forall_pieces_cons (fun x => step_tcol (F := F) L fl _ 2 (by decide) (off5_blk L T0) _ 0 1008 inb_S2048_S1024_0 inb_S2048_S16_1008 _ (by decide) (by decide) _ _ x) ?_
        refine View.forall_pieces_cons (fun x => step_tcol (F := F) L fl _ 2 (by decide) (off5_blk L T0) _ 0 992 inb_S2048_S1024_0 inb_S2048_S16_992 _ (by decide) (by decide) _ _ x) ?_
        refine View.forall_pieces_cons (fun x => step_tcol (F := F) L fl _ 2 (by decide) (off5_blk L T0) _ 0 976 inb_S2048_S1024_0 inb_S2048_S16_976 _ (by decide) (by decide) _ _ x) ?_
        refine View.forall_pieces_cons (fun x => step_tcol (F := F) L fl _ 2 (by decide) (off5_blk L T0) _ 0 960 inb_S2048_S1024_0 inb_S2048_S16_960 _ (by decide) (by decide) _ _ x) ?_
        refine View.forall_pieces_cons (fun x => step_tcol (F := F) L fl _ 2 (by decide) (off5_blk L T0) _ 0 944 inb_S2048_S1024_0 inb_S2048_S16_944 _ (by decide) (by decide) _ _ x) ?_
        refine View.forall_pieces_cons (fun x => step_tcol (F := F) L fl _ 2 (by decide) (off5_blk L T0) _ 0 928 inb_S2048_S1024_0 inb_S2048_S16_928 _ (by decide) (by decide) _ _ x) ?_
        refine View.forall_pieces_cons (fun x => step_tcol (F := F) L fl _ 2 (by decide) (off5_blk L T0) _ 0 912 inb_S2048_S1024_0 inb_S2048_S16_912 _ (by decide) (by decide) _ _ x) ?_
        refine View.forall_pieces_cons (fun x => step_tcol (F := F) L fl _ 2 (by decide) (off5_blk L T0) _ 0 896 inb_S2048_S1024_0 inb_S2048_S16_896 _ (by decide) (by decide) _ _ x) ?_
        refine View.forall_pieces_cons (fun x => step_tcol (F := F) L fl _ 2 (by decide) (off5_blk L T0) _ 0 880 inb_S2048_S1024_0 inb_S2048_S16_880 _ (by decide) (by decide) _ _ x) ?_
        refine View.forall_pieces_cons (fun x => step_tcol (F := F) L fl _ 2 (by decide) (off5_blk L T0) _ 0 864 inb_S2048_S1024_0 inb_S2048_S16_864 _ (by decide) (by decide) _ _ x) ?_
        refine View.forall_pieces_cons (fun x => step_tcol (F := F) L fl _ 2 (by decide) (off5_blk L T0) _ 0 848 inb_S2048_S1024_0 inb_S2048_S16_848 _ (by decide) (by decide) _ _ x) ?_
        refine View.forall_pieces_cons (fun x => step_tcol (F := F) L fl _ 2 (by decide) (off5_blk L T0) _ 0 832 inb_S2048_S1024_0 inb_S2048_S16_832 _ (by decide) (by decide) _ _ x) ?_
        refine View.forall_pieces_cons (fun x => step_tcol (F := F) L fl _ 2 (by decide) (off5_blk L T0) _ 0 816 inb_S2048_S1024_0 inb_S2048_S16_816 _ (by decide) (by decide) _ _ x) ?_
        refine View.forall_pieces_cons (fun x => step_tcol (F := F) L fl _ 2 (by decide) (off5_blk L T0) _ 0 800 inb_S2048_S1024_0 inb_S2048_S16_800 _ (by decide) (by decide) _ _ x) ?_
        refine View.forall_pieces_cons (fun x => step_tcol (F := F) L fl _ 2 (by decide) (off5_blk L T0) _ 0 784 inb_S2048_S1024_0 inb_S2048_S16_784 _ (by decide) (by decide) _ _ x) ?_
        refine View.forall_pieces_cons (fun x => step_tcol (F := F) L fl _ 2 (by decide) (off5_blk L T0) _ 0 768 inb_S2048_S1024_0 inb_S2048_S16_768 _ (by decide) (by decide) _ _ x) ?_
        refine View.forall_pieces_cons (fun x => step_tcol (F := F) L fl _ 2 (by decide) (off5_blk L T0) _ 0 752 inb_S2048_S1024_0 inb_S2048_S16_752 _ (by decide) (by decide) _ _ x) ?_
        refine View.forall_pieces_cons (fun x => step_tcol (F := F) L fl _ 2 (by decide) (off5_blk L T0) _ 0 736 inb_S2048_S1024_0 inb_S2048_S16_736 _ (by decide) (by decide) _ _ x) ?_
        refine View.forall_pieces_cons (fun x => step_tcol (F := F) L fl _ 2 (by decide) (off5_blk L T0) _ 0 720 inb_S2048_S1024_0 inb_S2048_S16_720 _ (by decide) (by decide) _ _ x) ?_
        refine View.forall_pieces_cons (fun x => step_tcol (F := F) L fl _ 2 (by decide) (off5_blk L T0) _ 0 704 inb_S2048_S1024_0 inb_S2048_S16_704 _ (by decide) (by decide) _ _ x) ?_
        refine View.forall_pieces_cons (fun x => step_tcol (F := F) L fl _ 2 (by decide) (off5_blk L T0) _ 0 688 inb_S2048_S1024_0 inb_S2048_S16_688 _ (by decide) (by decide) _ _ x) ?_
        refine View.forall_pieces_cons (fun x => step_tcol (F := F) L fl _ 2 (by decide) (off5_blk L T0) _ 0 672 inb_S2048_S1024_0 inb_S2048_S16_672 _ (by decide) (by decide) _ _ x) ?_
        refine View.forall_pieces_cons (fun x => step_tcol (F := F) L fl _ 2 (by decide) (off5_blk L T0) _ 0 656 inb_S2048_S1024_0 inb_S2048_S16_656 _ (by decide) (by decide) _ _ x) ?_
        refine View.forall_pieces_cons (fun x => step_tcol (F := F) L fl _ 2 (by decide) (off5_blk L T0) _ 0 640 inb_S2048_S1024_0 inb_S2048_S16_640 _ (by decide) (by decide) _ _ x) ?_
        refine View.forall_pieces_cons (fun x => step_tcol (F := F) L fl _ 2 (by decide) (off5_blk L T0) _ 0 624 inb_S2048_S1024_0 inb_S2048_S16_624 _ (by decide) (by decide) _ _ x) ?_
        refine View.forall_pieces_cons (fun x => step_tcol (F := F) L fl _ 2 (by decide) (off5_blk L T0) _ 0 608 inb_S2048_S1024_0 inb_S2048_S16_608 _ (by decide) (by decide) _ _ x) ?_
        refine View.forall_pieces_cons (fun x => step_tcol (F := F) L fl _ 2 (by decide) (off5_blk L T0) _ 0 592 inb_S2048_S1024_0 inb_S2048_S16_592 _ (by decide) (by decide) _ _ x) ?_
        refine View.forall_pieces_cons (fun x => step_tcol (F := F) L fl _ 2 (by decide) (off5_blk L T0) _ 0 576 inb_S2048_S1024_0 inb_S2048_S16_576 _ (by decide) (by decide) _ _ x) ?_
        refine View.forall_pieces_cons (fun x => step_tcol (F := F) L fl _ 2 (by decide) (off5_blk L T0) _ 0 560 inb_S2048_S1024_0 inb_S2048_S16_560 _ (by decide) (by decide) _ _ x) ?_
        refine View.forall_pieces_cons (fun x => step_tcol (F := F) L fl _ 2 (by decide) (off5_blk L T0) _ 0 544 inb_S2048_S1024_0 inb_S2048_S16_544 _ (by decide) (by decide) _ _ x) ?_
        refine View.forall_pieces_cons (fun x => step_tcol (F := F) L fl _ 2 (by decide) (off5_blk L T0) _ 0 528 inb_S2048_S1024_0 inb_S2048_S16_528 _ (by decide) (by decide) _ _ x) ?_
        refine View.forall_pieces_cons (fun x => step_tcol (F := F) L fl _ 2 (by decide) (off5_blk L T0) _ 0 512 inb_S2048_S1024_0 inb_S2048_S16_512 _ (by decide) (by decide) _ _ x) ?_
        refine View.forall_pieces_cons (fun x => step_tcol (F := F) L fl _ 2 (by decide) (off5_blk L T0) _ 0 496 inb_S2048_S1024_0 inb_S2048_S16_496 _ (by decide) (by decide) _ _ x) ?_
        refine View.forall_pieces_cons (fun x => step_tcol (F := F) L fl _ 2 (by decide) (off5_blk L T0) _ 0 480 inb_S2048_S1024_0 inb_S2048_S16_480 _ (by decide) (by decide) _ _ x) ?_
        refine View.forall_pieces_cons (fun x => step_tcol (F := F) L fl _ 2 (by decide) (off5_blk L T0) _ 0 464 inb_S2048_S1024_0 inb_S2048_S16_464 _ (by decide) (by decide) _ _ x) ?_
        refine View.forall_pieces_cons (fun x => step_tcol (F := F) L fl _ 2 (by decide) (off5_blk L T0) _ 0 448 inb_S2048_S1024_0 inb_S2048_S16_448 _ (by decide) (by decide) _ _ x) ?_
        refine View.forall_pieces_cons (fun x => step_tcol (F := F) L fl _ 2 (by decide) (off5_blk L T0) _ 0 432 inb_S2048_S1024_0 inb_S2048_S16_432 _ (by decide) (by decide) _ _ x) ?_
        refine View.forall_pieces_cons (fun x => step_tcol (F := F) L fl _ 2 (by decide) (off5_blk L T0) _ 0 416 inb_S2048_S1024_0 inb_S2048_S16_416 _ (by decide) (by decide) _ _ x) ?_
        refine View.forall_pieces_cons (fun x => step_tcol (F := F) L fl _ 2 (by decide) (off5_blk L T0) _ 0 400 inb_S2048_S1024_0 inb_S2048_S16_400 _ (by decide) (by decide) _ _ x) ?_
        refine View.forall_pieces_cons (fun x => step_tcol (F := F) L fl _ 2 (by decide) (off5_blk L T0) _ 0 384 inb_S2048_S1024_0 inb_S2048_S16_384 _ (by decide) (by decide) _ _ x) ?_
        refine View.forall_pieces_cons (fun x => step_tcol (F := F) L fl _ 2 (by decide) (off5_blk L T0) _ 0 368 inb_S2048_S1024_0 inb_S2048_S16_368 _ (by decide) (by decide) _ _ x) ?_
        refine View.forall_pieces_cons (fun x => step_tcol (F := F) L fl _ 2 (by decide) (off5_blk L T0) _ 0 352 inb_S2048_S1024_0 inb_S2048_S16_352 _ (by decide) (by decide) _ _ x) ?_
        refine View.forall_pieces_cons (fun x => step_tcol (F := F) L fl _ 2 (by decide) (off5_blk L T0) _ 0 336 inb_S2048_S1024_0 inb_S2048_S16_336 _ (by decide) (by decide) _ _ x) ?_
        refine View.forall_pieces_cons (fun x => step_tcol (F := F) L fl _ 2 (by decide) (off5_blk L T0) _ 0 320 inb_S2048_S1024_0 inb_S2048_S16_320 _ (by decide) (by decide) _ _ x) ?_
        refine View.forall_pieces_cons (fun x => step_tcol (F := F) L fl _ 2 (by decide) (off5_blk L T0) _ 0 304 inb_S2048_S1024_0 inb_S2048_S16_304 _ (by decide) (by decide) _ _ x) ?_
        refine View.forall_pieces_cons (fun x => step_tcol (F := F) L fl _ 2 (by decide) (off5_blk L T0) _ 0 288 inb_S2048_S1024_0 inb_S2048_S16_288 _ (by decide) (by decide) _ _ x) ?_
        refine View.forall_pieces_cons (fun x => step_tcol (F := F) L fl _ 2 (by decide) (off5_blk L T0) _ 0 272 inb_S2048_S1024_0 inb_S2048_S16_272 _ (by decide) (by decide) _ _ x) ?_
        refine View.forall_pieces_cons (fun x => step_tcol (F := F) L fl _ 2 (by decide) (off5_blk L T0) _ 0 256 inb_S2048_S1024_0 inb_S2048_S16_256 _ (by decide) (by decide) _ _ x) ?_
        refine View.forall_pieces_cons (fun x => step_tcol (F := F) L fl _ 2 (by decide) (off5_blk L T0) _ 0 240 inb_S2048_S1024_0 inb_S2048_S16_240 _ (by decide) (by decide) _ _ x) ?_
        refine View.forall_pieces_cons (fun x => step_tcol (F := F) L fl _ 2 (by decide) (off5_blk L T0) _ 0 224 inb_S2048_S1024_0 inb_S2048_S16_224 _ (by decide) (by decide) _ _ x) ?_
        refine View.forall_pieces_cons (fun x => step_tcol (F := F) L fl _ 2 (by decide) (off5_blk L T0) _ 0 208 inb_S2048_S1024_0 inb_S2048_S16_208 _ (by decide) (by decide) _ _ x) ?_
        refine View.forall_pieces_cons (fun x => step_tcol (F := F) L fl _ 2 (by decide) (off5_blk L T0) _ 0 192 inb_S2048_S1024_0 inb_S2048_S16_192 _ (by decide) (by decide) _ _ x) ?_
        refine View.forall_pieces_cons (fun x => step_tcol (F := F) L fl _ 2 (by decide) (off5_blk L T0) _ 0 176 inb_S2048_S1024_0 inb_S2048_S16_176 _ (by decide) (by decide) _ _ x) ?_
        refine View.forall_pieces_cons (fun x => step_tcol (F := F) L fl _ 2 (by decide) (off5_blk L T0) _ 0 160 inb_S2048_S1024_0 inb_S2048_S16_160 _ (by decide) (by decide) _ _ x) ?_
        refine View.forall_pieces_cons (fun x => step_tcol (F := F) L fl _ 2 (by decide) (off5_blk L T0) _ 0 144 inb_S2048_S1024_0 inb_S2048_S16_144 _ (by decide) (by decide) _ _ x) ?_
        refine View.forall_pieces_cons (fun x => step_tcol (F := F) L fl _ 2 (by decide) (off5_blk L T0) _ 0 128 inb_S2048_S1024_0 inb_S2048_S16_128 _ (by decide) (by decide) _ _ x) ?_
        refine View.forall_pieces_cons (fun x => step_tcol (F := F) L fl _ 2 (by decide) (off5_blk L T0) _ 0 112 inb_S2048_S1024_0 inb_S2048_S16_112 _ (by decide) (by decide) _ _ x) ?_
        refine View.forall_pieces_cons (fun x => step_tcol (F := F) L fl _ 2 (by decide) (off5_blk L T0) _ 0 96 inb_S2048_S1024_0 inb_S2048_S16_96 _ (by decide) (by decide) _ _ x) ?_
        refine View.forall_pieces_cons (fun x => step_tcol (F := F) L fl _ 2 (by decide) (off5_blk L T0) _ 0 80 inb_S2048_S1024_0 inb_S2048_S16_80 _ (by decide) (by decide) _ _ x) ?_
        refine View.forall_pieces_cons (fun x => step_tcol (F := F) L fl _ 2 (by decide) (off5_blk L T0) _ 0 64 inb_S2048_S1024_0 inb_S2048_S16_64 _ (by decide) (by decide) _ _ x) ?_
        refine View.forall_pieces_cons (fun x => step_tcol (F := F) L fl _ 2 (by decide) (off5_blk L T0) _ 0 48 inb_S2048_S1024_0 inb_S2048_S16_48 _ (by decide) (by decide) _ _ x) ?_
        refine View.forall_pieces_cons (fun x => step_tcol (F := F) L fl _ 2 (by decide) (off5_blk L T0) _ 0 32 inb_S2048_S1024_0 inb_S2048_S16_32 _ (by decide) (by decide) _ _ x) ?_
        refine View.forall_pieces_cons (fun x => step_tcol (F := F) L fl _ 2 (by decide) (off5_blk L T0) _ 0 16 inb_S2048_S1024_0 inb_S2048_S16_16 _ (by decide) (by decide) _ _ x) ?_
        refine View.forall_pieces_cons (fun x => step_tcol (F := F) L fl _ 2 (by decide) (off5_blk L T0) _ 0 0 inb_S2048_S1024_0 inb_S2048_S16_0 _ (by decide) (by decide) _ _ x) ?_
        exact View.forall_pieces_nil
  rw [inv1_flight (F := F) d L fl qt tab O _ 1 _ (Or.inr (by decide))]
  iintro %_ HI
  unfold invF
  icases HI with ⟨-, %r1, %g11, %g21, %wb1, %o1, %ho1, ⟨%hT1, %hR1, %ho1_eq, %hV1⟩, Hg0, H1, Ht, H3, H2, H4r, Hg1, %W1, %hW1, HO⟩
  have e81 : lo1 8 = ![0] := by unfold lo1; rfl
  obtain rfl : o1 = ![0] := ho1_eq.trans e81
  have hin1 := hin_of d L g11 hT1
  sl_exec_parts (disch := decide)
  -- even block 2
  ihave H4j := (wb_join_a (F := F) d L _ _) $$ [H4' H4r]
  · isplitl [H4'] <;> iassumption
  sl_for (inv0 d L fl qt tab O (insert (SemLoc.dma cc1_scratch8.sem, (default : HIx 1)) (insert (SemLoc.dma cc1_scratch9.sem, (default : HIx 1)) W1)) 2) $$ [Hmw Hg0 Ht H3 H1 H2 H4j Hg1 HO]
  case region => intro k _; exact pair0_region d L fl qt tab O _ 0#32 0#32 T1 _ k
  ·
    unfold inv0
    isplitl [Hmw]; · iexact Hmw
    iexists _; iexists _; iexists _; iexists _; iexists ![0]; iexists ho1
    isplitr; rotate_left
    · isplitl [Hg0]; rotate_left
      · isplitl [H1]; · iexact H1
        isplitl [Ht]; · iexact Ht
        isplitl [H3]; · iexact H3
        isplitl [H2]; · iexact H2
        isplitl [H4j]; · iexact H4j
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A2: the list's fifty words are not touched by the later stores
          intro i hi
          have hi0 := (mem_listM _ _ i).mp hi
          simp only [Matrix.cons_val_zero] at hi0
          exact (keep_word d L _ _ 1024 (by rfl) i (by omega)).symm
    · ipureintro
      -- HOLE B2: the values at the loop's entry
      obtain ⟨hTh, hRh, hRowsh⟩ := odd_to_even d L fl tab 1 (by decide) _ _ _ _ hV1
      have_entry even_entry
      refine key hfl hTh hRh hRowsh ?_ (by rfl) ?_ (by rfl) (by unfold lo; rfl)
      ·
        refine View.forall_pieces_cons (fun x => step_trow (F := F) L fl _ 3 (by decide) (off62_blk L T0) _ 1024 2032 inb_S2048_S1024_1024 inb_S2048_S16_2032 _ (by decide) (by decide) _ _ x) ?_
        refine View.forall_pieces_cons (fun x => step_trow (F := F) L fl _ 3 (by decide) (off62_blk L T0) _ 1024 2016 inb_S2048_S1024_1024 inb_S2048_S16_2016 _ (by decide) (by decide) _ _ x) ?_
        refine View.forall_pieces_cons (fun x => step_trow (F := F) L fl _ 3 (by decide) (off62_blk L T0) _ 1024 2000 inb_S2048_S1024_1024 inb_S2048_S16_2000 _ (by decide) (by decide) _ _ x) ?_
        refine View.forall_pieces_cons (fun x => step_trow (F := F) L fl _ 3 (by decide) (off62_blk L T0) _ 1024 1984 inb_S2048_S1024_1024 inb_S2048_S16_1984 _ (by decide) (by decide) _ _ x) ?_
        refine View.forall_pieces_cons (fun x => step_trow (F := F) L fl _ 3 (by decide) (off62_blk L T0) _ 1024 1968 inb_S2048_S1024_1024 inb_S2048_S16_1968 _ (by decide) (by decide) _ _ x) ?_
        refine View.forall_pieces_cons (fun x => step_trow (F := F) L fl _ 3 (by decide) (off62_blk L T0) _ 1024 1952 inb_S2048_S1024_1024 inb_S2048_S16_1952 _ (by decide) (by decide) _ _ x) ?_
        refine View.forall_pieces_cons (fun x => step_trow (F := F) L fl _ 3 (by decide) (off62_blk L T0) _ 1024 1936 inb_S2048_S1024_1024 inb_S2048_S16_1936 _ (by decide) (by decide) _ _ x) ?_
        refine View.forall_pieces_cons (fun x => step_trow (F := F) L fl _ 3 (by decide) (off62_blk L T0) _ 1024 1920 inb_S2048_S1024_1024 inb_S2048_S16_1920 _ (by decide) (by decide) _ _ x) ?_
        refine View.forall_pieces_cons (fun x => step_trow (F := F) L fl _ 3 (by decide) (off62_blk L T0) _ 1024 1904 inb_S2048_S1024_1024 inb_S2048_S16_1904 _ (by decide) (by decide) _ _ x) ?_
        refine View.forall_pieces_cons (fun x => step_trow (F := F) L fl _ 3 (by decide) (off62_blk L T0) _ 1024 1888 inb_S2048_S1024_1024 inb_S2048_S16_1888 _ (by decide) (by decide) _ _ x) ?_
        refine View.forall_pieces_cons (fun x => step_trow (F := F) L fl _ 3 (by decide) (off62_blk L T0) _ 1024 1872 inb_S2048_S1024_1024 inb_S2048_S16_1872 _ (by decide) (by decide) _ _ x) ?_
        refine View.forall_pieces_cons (fun x => step_trow (F := F) L fl _ 3 (by decide) (off62_blk L T0) _ 1024 1856 inb_S2048_S1024_1024 inb_S2048_S16_1856 _ (by decide) (by decide) _ _ x) ?_
        refine View.forall_pieces_cons (fun x => step_trow (F := F) L fl _ 3 (by decide) (off62_blk L T0) _ 1024 1840 inb_S2048_S1024_1024 inb_S2048_S16_1840 _ (by decide) (by decide) _ _ x) ?_
        refine View.forall_pieces_cons (fun x => step_trow (F := F) L fl _ 3 (by decide) (off62_blk L T0) _ 1024 1824 inb_S2048_S1024_1024 inb_S2048_S16_1824 _ (by decide) (by decide) _ _ x) ?_
        refine View.forall_pieces_cons (fun x => step_trow (F := F) L fl _ 3 (by decide) (off62_blk L T0) _ 1024 1808 inb_S2048_S1024_1024 inb_S2048_S16_1808 _ (by decide) (by decide) _ _ x) ?_
        refine View.forall_pieces_cons (fun x => step_trow (F := F) L fl _ 3 (by decide) (off62_blk L T0) _ 1024 1792 inb_S2048_S1024_1024 inb_S2048_S16_1792 _ (by decide) (by decide) _ _ x) ?_
        refine View.forall_pieces_cons (fun x => step_trow (F := F) L fl _ 3 (by decide) (off62_blk L T0) _ 1024 1776 inb_S2048_S1024_1024 inb_S2048_S16_1776 _ (by decide) (by decide) _ _ x) ?_
        refine View.forall_pieces_cons (fun x => step_trow (F := F) L fl _ 3 (by decide) (off62_blk L T0) _ 1024 1760 inb_S2048_S1024_1024 inb_S2048_S16_1760 _ (by decide) (by decide) _ _ x) ?_
        refine View.forall_pieces_cons (fun x => step_trow (F := F) L fl _ 3 (by decide) (off62_blk L T0) _ 1024 1744 inb_S2048_S1024_1024 inb_S2048_S16_1744 _ (by decide) (by decide) _ _ x) ?_
        refine View.forall_pieces_cons (fun x => step_trow (F := F) L fl _ 3 (by decide) (off62_blk L T0) _ 1024 1728 inb_S2048_S1024_1024 inb_S2048_S16_1728 _ (by decide) (by decide) _ _ x) ?_
        refine View.forall_pieces_cons (fun x => step_trow (F := F) L fl _ 3 (by decide) (off62_blk L T0) _ 1024 1712 inb_S2048_S1024_1024 inb_S2048_S16_1712 _ (by decide) (by decide) _ _ x) ?_
        refine View.forall_pieces_cons (fun x => step_trow (F := F) L fl _ 3 (by decide) (off62_blk L T0) _ 1024 1696 inb_S2048_S1024_1024 inb_S2048_S16_1696 _ (by decide) (by decide) _ _ x) ?_
        refine View.forall_pieces_cons (fun x => step_trow (F := F) L fl _ 3 (by decide) (off62_blk L T0) _ 1024 1680 inb_S2048_S1024_1024 inb_S2048_S16_1680 _ (by decide) (by decide) _ _ x) ?_
        refine View.forall_pieces_cons (fun x => step_trow (F := F) L fl _ 3 (by decide) (off62_blk L T0) _ 1024 1664 inb_S2048_S1024_1024 inb_S2048_S16_1664 _ (by decide) (by decide) _ _ x) ?_
        refine View.forall_pieces_cons (fun x => step_trow (F := F) L fl _ 3 (by decide) (off62_blk L T0) _ 1024 1648 inb_S2048_S1024_1024 inb_S2048_S16_1648 _ (by decide) (by decide) _ _ x) ?_
        refine View.forall_pieces_cons (fun x => step_trow (F := F) L fl _ 3 (by decide) (off62_blk L T0) _ 1024 1632 inb_S2048_S1024_1024 inb_S2048_S16_1632 _ (by decide) (by decide) _ _ x) ?_
        refine View.forall_pieces_cons (fun x => step_trow (F := F) L fl _ 3 (by decide) (off62_blk L T0) _ 1024 1616 inb_S2048_S1024_1024 inb_S2048_S16_1616 _ (by decide) (by decide) _ _ x) ?_
        refine View.forall_pieces_cons (fun x => step_trow (F := F) L fl _ 3 (by decide) (off62_blk L T0) _ 1024 1600 inb_S2048_S1024_1024 inb_S2048_S16_1600 _ (by decide) (by decide) _ _ x) ?_
        refine View.forall_pieces_cons (fun x => step_trow (F := F) L fl _ 3 (by decide) (off62_blk L T0) _ 1024 1584 inb_S2048_S1024_1024 inb_S2048_S16_1584 _ (by decide) (by decide) _ _ x) ?_
        refine View.forall_pieces_cons (fun x => step_trow (F := F) L fl _ 3 (by decide) (off62_blk L T0) _ 1024 1568 inb_S2048_S1024_1024 inb_S2048_S16_1568 _ (by decide) (by decide) _ _ x) ?_
        refine View.forall_pieces_cons (fun x => step_trow (F := F) L fl _ 3 (by decide) (off62_blk L T0) _ 1024 1552 inb_S2048_S1024_1024 inb_S2048_S16_1552 _ (by decide) (by decide) _ _ x) ?_
        refine View.forall_pieces_cons (fun x => step_trow (F := F) L fl _ 3 (by decide) (off62_blk L T0) _ 1024 1536 inb_S2048_S1024_1024 inb_S2048_S16_1536 _ (by decide) (by decide) _ _ x) ?_
        refine View.forall_pieces_cons (fun x => step_trow (F := F) L fl _ 3 (by decide) (off62_blk L T0) _ 1024 1520 inb_S2048_S1024_1024 inb_S2048_S16_1520 _ (by decide) (by decide) _ _ x) ?_
        refine View.forall_pieces_cons (fun x => step_trow (F := F) L fl _ 3 (by decide) (off62_blk L T0) _ 1024 1504 inb_S2048_S1024_1024 inb_S2048_S16_1504 _ (by decide) (by decide) _ _ x) ?_
        refine View.forall_pieces_cons (fun x => step_trow (F := F) L fl _ 3 (by decide) (off62_blk L T0) _ 1024 1488 inb_S2048_S1024_1024 inb_S2048_S16_1488 _ (by decide) (by decide) _ _ x) ?_
        refine View.forall_pieces_cons (fun x => step_trow (F := F) L fl _ 3 (by decide) (off62_blk L T0) _ 1024 1472 inb_S2048_S1024_1024 inb_S2048_S16_1472 _ (by decide) (by decide) _ _ x) ?_
        refine View.forall_pieces_cons (fun x => step_trow (F := F) L fl _ 3 (by decide) (off62_blk L T0) _ 1024 1456 inb_S2048_S1024_1024 inb_S2048_S16_1456 _ (by decide) (by decide) _ _ x) ?_
        refine View.forall_pieces_cons (fun x => step_trow (F := F) L fl _ 3 (by decide) (off62_blk L T0) _ 1024 1440 inb_S2048_S1024_1024 inb_S2048_S16_1440 _ (by decide) (by decide) _ _ x) ?_
        refine View.forall_pieces_cons (fun x => step_trow (F := F) L fl _ 3 (by decide) (off62_blk L T0) _ 1024 1424 inb_S2048_S1024_1024 inb_S2048_S16_1424 _ (by decide) (by decide) _ _ x) ?_
        refine View.forall_pieces_cons (fun x => step_trow (F := F) L fl _ 3 (by decide) (off62_blk L T0) _ 1024 1408 inb_S2048_S1024_1024 inb_S2048_S16_1408 _ (by decide) (by decide) _ _ x) ?_
        refine View.forall_pieces_cons (fun x => step_trow (F := F) L fl _ 3 (by decide) (off62_blk L T0) _ 1024 1392 inb_S2048_S1024_1024 inb_S2048_S16_1392 _ (by decide) (by decide) _ _ x) ?_
        refine View.forall_pieces_cons (fun x => step_trow (F := F) L fl _ 3 (by decide) (off62_blk L T0) _ 1024 1376 inb_S2048_S1024_1024 inb_S2048_S16_1376 _ (by decide) (by decide) _ _ x) ?_
        refine View.forall_pieces_cons (fun x => step_trow (F := F) L fl _ 3 (by decide) (off62_blk L T0) _ 1024 1360 inb_S2048_S1024_1024 inb_S2048_S16_1360 _ (by decide) (by decide) _ _ x) ?_
        refine View.forall_pieces_cons (fun x => step_trow (F := F) L fl _ 3 (by decide) (off62_blk L T0) _ 1024 1344 inb_S2048_S1024_1024 inb_S2048_S16_1344 _ (by decide) (by decide) _ _ x) ?_
        refine View.forall_pieces_cons (fun x => step_trow (F := F) L fl _ 3 (by decide) (off62_blk L T0) _ 1024 1328 inb_S2048_S1024_1024 inb_S2048_S16_1328 _ (by decide) (by decide) _ _ x) ?_
        refine View.forall_pieces_cons (fun x => step_trow (F := F) L fl _ 3 (by decide) (off62_blk L T0) _ 1024 1312 inb_S2048_S1024_1024 inb_S2048_S16_1312 _ (by decide) (by decide) _ _ x) ?_
        refine View.forall_pieces_cons (fun x => step_trow (F := F) L fl _ 3 (by decide) (off62_blk L T0) _ 1024 1296 inb_S2048_S1024_1024 inb_S2048_S16_1296 _ (by decide) (by decide) _ _ x) ?_
        refine View.forall_pieces_cons (fun x => step_trow (F := F) L fl _ 3 (by decide) (off62_blk L T0) _ 1024 1280 inb_S2048_S1024_1024 inb_S2048_S16_1280 _ (by decide) (by decide) _ _ x) ?_
        refine View.forall_pieces_cons (fun x => step_trow (F := F) L fl _ 3 (by decide) (off62_blk L T0) _ 1024 1264 inb_S2048_S1024_1024 inb_S2048_S16_1264 _ (by decide) (by decide) _ _ x) ?_
        refine View.forall_pieces_cons (fun x => step_trow (F := F) L fl _ 3 (by decide) (off62_blk L T0) _ 1024 1248 inb_S2048_S1024_1024 inb_S2048_S16_1248 _ (by decide) (by decide) _ _ x) ?_
        refine View.forall_pieces_cons (fun x => step_trow (F := F) L fl _ 3 (by decide) (off62_blk L T0) _ 1024 1232 inb_S2048_S1024_1024 inb_S2048_S16_1232 _ (by decide) (by decide) _ _ x) ?_
        refine View.forall_pieces_cons (fun x => step_trow (F := F) L fl _ 3 (by decide) (off62_blk L T0) _ 1024 1216 inb_S2048_S1024_1024 inb_S2048_S16_1216 _ (by decide) (by decide) _ _ x) ?_
        refine View.forall_pieces_cons (fun x => step_trow (F := F) L fl _ 3 (by decide) (off62_blk L T0) _ 1024 1200 inb_S2048_S1024_1024 inb_S2048_S16_1200 _ (by decide) (by decide) _ _ x) ?_
        refine View.forall_pieces_cons (fun x => step_trow (F := F) L fl _ 3 (by decide) (off62_blk L T0) _ 1024 1184 inb_S2048_S1024_1024 inb_S2048_S16_1184 _ (by decide) (by decide) _ _ x) ?_
        refine View.forall_pieces_cons (fun x => step_trow (F := F) L fl _ 3 (by decide) (off62_blk L T0) _ 1024 1168 inb_S2048_S1024_1024 inb_S2048_S16_1168 _ (by decide) (by decide) _ _ x) ?_
        refine View.forall_pieces_cons (fun x => step_trow (F := F) L fl _ 3 (by decide) (off62_blk L T0) _ 1024 1152 inb_S2048_S1024_1024 inb_S2048_S16_1152 _ (by decide) (by decide) _ _ x) ?_
        refine View.forall_pieces_cons (fun x => step_trow (F := F) L fl _ 3 (by decide) (off62_blk L T0) _ 1024 1136 inb_S2048_S1024_1024 inb_S2048_S16_1136 _ (by decide) (by decide) _ _ x) ?_
        refine View.forall_pieces_cons (fun x => step_trow (F := F) L fl _ 3 (by decide) (off62_blk L T0) _ 1024 1120 inb_S2048_S1024_1024 inb_S2048_S16_1120 _ (by decide) (by decide) _ _ x) ?_
        refine View.forall_pieces_cons (fun x => step_trow (F := F) L fl _ 3 (by decide) (off62_blk L T0) _ 1024 1104 inb_S2048_S1024_1024 inb_S2048_S16_1104 _ (by decide) (by decide) _ _ x) ?_
        refine View.forall_pieces_cons (fun x => step_trow (F := F) L fl _ 3 (by decide) (off62_blk L T0) _ 1024 1088 inb_S2048_S1024_1024 inb_S2048_S16_1088 _ (by decide) (by decide) _ _ x) ?_
        refine View.forall_pieces_cons (fun x => step_trow (F := F) L fl _ 3 (by decide) (off62_blk L T0) _ 1024 1072 inb_S2048_S1024_1024 inb_S2048_S16_1072 _ (by decide) (by decide) _ _ x) ?_
        refine View.forall_pieces_cons (fun x => step_trow (F := F) L fl _ 3 (by decide) (off62_blk L T0) _ 1024 1056 inb_S2048_S1024_1024 inb_S2048_S16_1056 _ (by decide) (by decide) _ _ x) ?_
        refine View.forall_pieces_cons (fun x => step_trow (F := F) L fl _ 3 (by decide) (off62_blk L T0) _ 1024 1040 inb_S2048_S1024_1024 inb_S2048_S16_1040 _ (by decide) (by decide) _ _ x) ?_
        refine View.forall_pieces_cons (fun x => step_trow (F := F) L fl _ 3 (by decide) (off62_blk L T0) _ 1024 1024 inb_S2048_S1024_1024 inb_S2048_S16_1024 _ (by decide) (by decide) _ _ x) ?_
        exact View.forall_pieces_nil
      ·
        refine View.forall_pieces_cons (fun x => step_tcol (F := F) L fl _ 3 (by decide) (off62_blk L T0) _ 1024 2032 inb_S2048_S1024_1024 inb_S2048_S16_2032 _ (by decide) (by decide) _ _ x) ?_
        refine View.forall_pieces_cons (fun x => step_tcol (F := F) L fl _ 3 (by decide) (off62_blk L T0) _ 1024 2016 inb_S2048_S1024_1024 inb_S2048_S16_2016 _ (by decide) (by decide) _ _ x) ?_
        refine View.forall_pieces_cons (fun x => step_tcol (F := F) L fl _ 3 (by decide) (off62_blk L T0) _ 1024 2000 inb_S2048_S1024_1024 inb_S2048_S16_2000 _ (by decide) (by decide) _ _ x) ?_
        refine View.forall_pieces_cons (fun x => step_tcol (F := F) L fl _ 3 (by decide) (off62_blk L T0) _ 1024 1984 inb_S2048_S1024_1024 inb_S2048_S16_1984 _ (by decide) (by decide) _ _ x) ?_
        refine View.forall_pieces_cons (fun x => step_tcol (F := F) L fl _ 3 (by decide) (off62_blk L T0) _ 1024 1968 inb_S2048_S1024_1024 inb_S2048_S16_1968 _ (by decide) (by decide) _ _ x) ?_
        refine View.forall_pieces_cons (fun x => step_tcol (F := F) L fl _ 3 (by decide) (off62_blk L T0) _ 1024 1952 inb_S2048_S1024_1024 inb_S2048_S16_1952 _ (by decide) (by decide) _ _ x) ?_
        refine View.forall_pieces_cons (fun x => step_tcol (F := F) L fl _ 3 (by decide) (off62_blk L T0) _ 1024 1936 inb_S2048_S1024_1024 inb_S2048_S16_1936 _ (by decide) (by decide) _ _ x) ?_
        refine View.forall_pieces_cons (fun x => step_tcol (F := F) L fl _ 3 (by decide) (off62_blk L T0) _ 1024 1920 inb_S2048_S1024_1024 inb_S2048_S16_1920 _ (by decide) (by decide) _ _ x) ?_
        refine View.forall_pieces_cons (fun x => step_tcol (F := F) L fl _ 3 (by decide) (off62_blk L T0) _ 1024 1904 inb_S2048_S1024_1024 inb_S2048_S16_1904 _ (by decide) (by decide) _ _ x) ?_
        refine View.forall_pieces_cons (fun x => step_tcol (F := F) L fl _ 3 (by decide) (off62_blk L T0) _ 1024 1888 inb_S2048_S1024_1024 inb_S2048_S16_1888 _ (by decide) (by decide) _ _ x) ?_
        refine View.forall_pieces_cons (fun x => step_tcol (F := F) L fl _ 3 (by decide) (off62_blk L T0) _ 1024 1872 inb_S2048_S1024_1024 inb_S2048_S16_1872 _ (by decide) (by decide) _ _ x) ?_
        refine View.forall_pieces_cons (fun x => step_tcol (F := F) L fl _ 3 (by decide) (off62_blk L T0) _ 1024 1856 inb_S2048_S1024_1024 inb_S2048_S16_1856 _ (by decide) (by decide) _ _ x) ?_
        refine View.forall_pieces_cons (fun x => step_tcol (F := F) L fl _ 3 (by decide) (off62_blk L T0) _ 1024 1840 inb_S2048_S1024_1024 inb_S2048_S16_1840 _ (by decide) (by decide) _ _ x) ?_
        refine View.forall_pieces_cons (fun x => step_tcol (F := F) L fl _ 3 (by decide) (off62_blk L T0) _ 1024 1824 inb_S2048_S1024_1024 inb_S2048_S16_1824 _ (by decide) (by decide) _ _ x) ?_
        refine View.forall_pieces_cons (fun x => step_tcol (F := F) L fl _ 3 (by decide) (off62_blk L T0) _ 1024 1808 inb_S2048_S1024_1024 inb_S2048_S16_1808 _ (by decide) (by decide) _ _ x) ?_
        refine View.forall_pieces_cons (fun x => step_tcol (F := F) L fl _ 3 (by decide) (off62_blk L T0) _ 1024 1792 inb_S2048_S1024_1024 inb_S2048_S16_1792 _ (by decide) (by decide) _ _ x) ?_
        refine View.forall_pieces_cons (fun x => step_tcol (F := F) L fl _ 3 (by decide) (off62_blk L T0) _ 1024 1776 inb_S2048_S1024_1024 inb_S2048_S16_1776 _ (by decide) (by decide) _ _ x) ?_
        refine View.forall_pieces_cons (fun x => step_tcol (F := F) L fl _ 3 (by decide) (off62_blk L T0) _ 1024 1760 inb_S2048_S1024_1024 inb_S2048_S16_1760 _ (by decide) (by decide) _ _ x) ?_
        refine View.forall_pieces_cons (fun x => step_tcol (F := F) L fl _ 3 (by decide) (off62_blk L T0) _ 1024 1744 inb_S2048_S1024_1024 inb_S2048_S16_1744 _ (by decide) (by decide) _ _ x) ?_
        refine View.forall_pieces_cons (fun x => step_tcol (F := F) L fl _ 3 (by decide) (off62_blk L T0) _ 1024 1728 inb_S2048_S1024_1024 inb_S2048_S16_1728 _ (by decide) (by decide) _ _ x) ?_
        refine View.forall_pieces_cons (fun x => step_tcol (F := F) L fl _ 3 (by decide) (off62_blk L T0) _ 1024 1712 inb_S2048_S1024_1024 inb_S2048_S16_1712 _ (by decide) (by decide) _ _ x) ?_
        refine View.forall_pieces_cons (fun x => step_tcol (F := F) L fl _ 3 (by decide) (off62_blk L T0) _ 1024 1696 inb_S2048_S1024_1024 inb_S2048_S16_1696 _ (by decide) (by decide) _ _ x) ?_
        refine View.forall_pieces_cons (fun x => step_tcol (F := F) L fl _ 3 (by decide) (off62_blk L T0) _ 1024 1680 inb_S2048_S1024_1024 inb_S2048_S16_1680 _ (by decide) (by decide) _ _ x) ?_
        refine View.forall_pieces_cons (fun x => step_tcol (F := F) L fl _ 3 (by decide) (off62_blk L T0) _ 1024 1664 inb_S2048_S1024_1024 inb_S2048_S16_1664 _ (by decide) (by decide) _ _ x) ?_
        refine View.forall_pieces_cons (fun x => step_tcol (F := F) L fl _ 3 (by decide) (off62_blk L T0) _ 1024 1648 inb_S2048_S1024_1024 inb_S2048_S16_1648 _ (by decide) (by decide) _ _ x) ?_
        refine View.forall_pieces_cons (fun x => step_tcol (F := F) L fl _ 3 (by decide) (off62_blk L T0) _ 1024 1632 inb_S2048_S1024_1024 inb_S2048_S16_1632 _ (by decide) (by decide) _ _ x) ?_
        refine View.forall_pieces_cons (fun x => step_tcol (F := F) L fl _ 3 (by decide) (off62_blk L T0) _ 1024 1616 inb_S2048_S1024_1024 inb_S2048_S16_1616 _ (by decide) (by decide) _ _ x) ?_
        refine View.forall_pieces_cons (fun x => step_tcol (F := F) L fl _ 3 (by decide) (off62_blk L T0) _ 1024 1600 inb_S2048_S1024_1024 inb_S2048_S16_1600 _ (by decide) (by decide) _ _ x) ?_
        refine View.forall_pieces_cons (fun x => step_tcol (F := F) L fl _ 3 (by decide) (off62_blk L T0) _ 1024 1584 inb_S2048_S1024_1024 inb_S2048_S16_1584 _ (by decide) (by decide) _ _ x) ?_
        refine View.forall_pieces_cons (fun x => step_tcol (F := F) L fl _ 3 (by decide) (off62_blk L T0) _ 1024 1568 inb_S2048_S1024_1024 inb_S2048_S16_1568 _ (by decide) (by decide) _ _ x) ?_
        refine View.forall_pieces_cons (fun x => step_tcol (F := F) L fl _ 3 (by decide) (off62_blk L T0) _ 1024 1552 inb_S2048_S1024_1024 inb_S2048_S16_1552 _ (by decide) (by decide) _ _ x) ?_
        refine View.forall_pieces_cons (fun x => step_tcol (F := F) L fl _ 3 (by decide) (off62_blk L T0) _ 1024 1536 inb_S2048_S1024_1024 inb_S2048_S16_1536 _ (by decide) (by decide) _ _ x) ?_
        refine View.forall_pieces_cons (fun x => step_tcol (F := F) L fl _ 3 (by decide) (off62_blk L T0) _ 1024 1520 inb_S2048_S1024_1024 inb_S2048_S16_1520 _ (by decide) (by decide) _ _ x) ?_
        refine View.forall_pieces_cons (fun x => step_tcol (F := F) L fl _ 3 (by decide) (off62_blk L T0) _ 1024 1504 inb_S2048_S1024_1024 inb_S2048_S16_1504 _ (by decide) (by decide) _ _ x) ?_
        refine View.forall_pieces_cons (fun x => step_tcol (F := F) L fl _ 3 (by decide) (off62_blk L T0) _ 1024 1488 inb_S2048_S1024_1024 inb_S2048_S16_1488 _ (by decide) (by decide) _ _ x) ?_
        refine View.forall_pieces_cons (fun x => step_tcol (F := F) L fl _ 3 (by decide) (off62_blk L T0) _ 1024 1472 inb_S2048_S1024_1024 inb_S2048_S16_1472 _ (by decide) (by decide) _ _ x) ?_
        refine View.forall_pieces_cons (fun x => step_tcol (F := F) L fl _ 3 (by decide) (off62_blk L T0) _ 1024 1456 inb_S2048_S1024_1024 inb_S2048_S16_1456 _ (by decide) (by decide) _ _ x) ?_
        refine View.forall_pieces_cons (fun x => step_tcol (F := F) L fl _ 3 (by decide) (off62_blk L T0) _ 1024 1440 inb_S2048_S1024_1024 inb_S2048_S16_1440 _ (by decide) (by decide) _ _ x) ?_
        refine View.forall_pieces_cons (fun x => step_tcol (F := F) L fl _ 3 (by decide) (off62_blk L T0) _ 1024 1424 inb_S2048_S1024_1024 inb_S2048_S16_1424 _ (by decide) (by decide) _ _ x) ?_
        refine View.forall_pieces_cons (fun x => step_tcol (F := F) L fl _ 3 (by decide) (off62_blk L T0) _ 1024 1408 inb_S2048_S1024_1024 inb_S2048_S16_1408 _ (by decide) (by decide) _ _ x) ?_
        refine View.forall_pieces_cons (fun x => step_tcol (F := F) L fl _ 3 (by decide) (off62_blk L T0) _ 1024 1392 inb_S2048_S1024_1024 inb_S2048_S16_1392 _ (by decide) (by decide) _ _ x) ?_
        refine View.forall_pieces_cons (fun x => step_tcol (F := F) L fl _ 3 (by decide) (off62_blk L T0) _ 1024 1376 inb_S2048_S1024_1024 inb_S2048_S16_1376 _ (by decide) (by decide) _ _ x) ?_
        refine View.forall_pieces_cons (fun x => step_tcol (F := F) L fl _ 3 (by decide) (off62_blk L T0) _ 1024 1360 inb_S2048_S1024_1024 inb_S2048_S16_1360 _ (by decide) (by decide) _ _ x) ?_
        refine View.forall_pieces_cons (fun x => step_tcol (F := F) L fl _ 3 (by decide) (off62_blk L T0) _ 1024 1344 inb_S2048_S1024_1024 inb_S2048_S16_1344 _ (by decide) (by decide) _ _ x) ?_
        refine View.forall_pieces_cons (fun x => step_tcol (F := F) L fl _ 3 (by decide) (off62_blk L T0) _ 1024 1328 inb_S2048_S1024_1024 inb_S2048_S16_1328 _ (by decide) (by decide) _ _ x) ?_
        refine View.forall_pieces_cons (fun x => step_tcol (F := F) L fl _ 3 (by decide) (off62_blk L T0) _ 1024 1312 inb_S2048_S1024_1024 inb_S2048_S16_1312 _ (by decide) (by decide) _ _ x) ?_
        refine View.forall_pieces_cons (fun x => step_tcol (F := F) L fl _ 3 (by decide) (off62_blk L T0) _ 1024 1296 inb_S2048_S1024_1024 inb_S2048_S16_1296 _ (by decide) (by decide) _ _ x) ?_
        refine View.forall_pieces_cons (fun x => step_tcol (F := F) L fl _ 3 (by decide) (off62_blk L T0) _ 1024 1280 inb_S2048_S1024_1024 inb_S2048_S16_1280 _ (by decide) (by decide) _ _ x) ?_
        refine View.forall_pieces_cons (fun x => step_tcol (F := F) L fl _ 3 (by decide) (off62_blk L T0) _ 1024 1264 inb_S2048_S1024_1024 inb_S2048_S16_1264 _ (by decide) (by decide) _ _ x) ?_
        refine View.forall_pieces_cons (fun x => step_tcol (F := F) L fl _ 3 (by decide) (off62_blk L T0) _ 1024 1248 inb_S2048_S1024_1024 inb_S2048_S16_1248 _ (by decide) (by decide) _ _ x) ?_
        refine View.forall_pieces_cons (fun x => step_tcol (F := F) L fl _ 3 (by decide) (off62_blk L T0) _ 1024 1232 inb_S2048_S1024_1024 inb_S2048_S16_1232 _ (by decide) (by decide) _ _ x) ?_
        refine View.forall_pieces_cons (fun x => step_tcol (F := F) L fl _ 3 (by decide) (off62_blk L T0) _ 1024 1216 inb_S2048_S1024_1024 inb_S2048_S16_1216 _ (by decide) (by decide) _ _ x) ?_
        refine View.forall_pieces_cons (fun x => step_tcol (F := F) L fl _ 3 (by decide) (off62_blk L T0) _ 1024 1200 inb_S2048_S1024_1024 inb_S2048_S16_1200 _ (by decide) (by decide) _ _ x) ?_
        refine View.forall_pieces_cons (fun x => step_tcol (F := F) L fl _ 3 (by decide) (off62_blk L T0) _ 1024 1184 inb_S2048_S1024_1024 inb_S2048_S16_1184 _ (by decide) (by decide) _ _ x) ?_
        refine View.forall_pieces_cons (fun x => step_tcol (F := F) L fl _ 3 (by decide) (off62_blk L T0) _ 1024 1168 inb_S2048_S1024_1024 inb_S2048_S16_1168 _ (by decide) (by decide) _ _ x) ?_
        refine View.forall_pieces_cons (fun x => step_tcol (F := F) L fl _ 3 (by decide) (off62_blk L T0) _ 1024 1152 inb_S2048_S1024_1024 inb_S2048_S16_1152 _ (by decide) (by decide) _ _ x) ?_
        refine View.forall_pieces_cons (fun x => step_tcol (F := F) L fl _ 3 (by decide) (off62_blk L T0) _ 1024 1136 inb_S2048_S1024_1024 inb_S2048_S16_1136 _ (by decide) (by decide) _ _ x) ?_
        refine View.forall_pieces_cons (fun x => step_tcol (F := F) L fl _ 3 (by decide) (off62_blk L T0) _ 1024 1120 inb_S2048_S1024_1024 inb_S2048_S16_1120 _ (by decide) (by decide) _ _ x) ?_
        refine View.forall_pieces_cons (fun x => step_tcol (F := F) L fl _ 3 (by decide) (off62_blk L T0) _ 1024 1104 inb_S2048_S1024_1024 inb_S2048_S16_1104 _ (by decide) (by decide) _ _ x) ?_
        refine View.forall_pieces_cons (fun x => step_tcol (F := F) L fl _ 3 (by decide) (off62_blk L T0) _ 1024 1088 inb_S2048_S1024_1024 inb_S2048_S16_1088 _ (by decide) (by decide) _ _ x) ?_
        refine View.forall_pieces_cons (fun x => step_tcol (F := F) L fl _ 3 (by decide) (off62_blk L T0) _ 1024 1072 inb_S2048_S1024_1024 inb_S2048_S16_1072 _ (by decide) (by decide) _ _ x) ?_
        refine View.forall_pieces_cons (fun x => step_tcol (F := F) L fl _ 3 (by decide) (off62_blk L T0) _ 1024 1056 inb_S2048_S1024_1024 inb_S2048_S16_1056 _ (by decide) (by decide) _ _ x) ?_
        refine View.forall_pieces_cons (fun x => step_tcol (F := F) L fl _ 3 (by decide) (off62_blk L T0) _ 1024 1040 inb_S2048_S1024_1024 inb_S2048_S16_1040 _ (by decide) (by decide) _ _ x) ?_
        refine View.forall_pieces_cons (fun x => step_tcol (F := F) L fl _ 3 (by decide) (off62_blk L T0) _ 1024 1024 inb_S2048_S1024_1024 inb_S2048_S16_1024 _ (by decide) (by decide) _ _ x) ?_
        exact View.forall_pieces_nil
  iintro %_ HI
  unfold inv0
  icases HI with ⟨-, %r2, %g12, %g22, %wb2, %o2, %ho2, ⟨%hT2, %hR2, %ho2_eq, %hV2⟩, Hg0, H1, Ht, H3, H2, H4r, Hg1, %W2, %hW2, HO⟩
  obtain rfl : o2 = ![1024] := ho2_eq.trans e8
  have hin2 := hin_of d L g12 hT2
  sl_exec_parts (disch := decide)
  -- odd block 3
  ihave H4j := (wb_join_b (F := F) d L _ _) $$ [H4r_2 H4r]
  · isplitl [H4r_2] <;> iassumption
  sl_for (inv1 d L fl qt tab O (insert (SemLoc.dma cc1_scratch7.sem, (default : HIx 1)) (insert (SemLoc.dma cc1_scratch10.sem, (default : HIx 1)) W2)) 3) $$ [Hmw Hg0 Ht H3 H1 H2 H4j Hg1 HO]
  case region => intro k _; exact pair1_region d L fl qt tab O _ T1 _ k
  · rw [inv1_flight (F := F) d L fl qt tab O _ 3 _ (Or.inl (by decide))]
    unfold invF
    isplitl [Hmw]; · iexact Hmw
    iexists _; iexists _; iexists _; iexists _; iexists ![1024]; iexists ho2
    isplitr; rotate_left
    · isplitl [Hg0]; rotate_left
      · isplitl [H1]; · iexact H1
        isplitl [Ht]; · iexact Ht
        isplitl [H3]; · iexact H3
        isplitl [H2]; · iexact H2
        isplitl [H4j]; · iexact H4j
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A3: the list's fifty words are not touched by the later stores
          intro i hi
          have hi0 := (mem_listM _ _ i).mp hi
          simp only [Matrix.cons_val_zero] at hi0
          exact (keep_word d L _ _ 0 (by rfl) i (by omega)).symm
    · ipureintro
      -- HOLE B3: the values at the loop's entry
      obtain ⟨hTh, hRh, hRowsh⟩ := even_to_odd d L fl tab 2 _ _ _ _ hV2
      have_entry odd_entry
      refine key hfl hTh hRh hRowsh ?_ (by rfl) ?_ (by rfl) (by unfold lo1; rfl)
      ·
        refine View.forall_pieces_cons (fun x => step_trow (F := F) L fl _ 4 (by decide) (off5_blk L T1) _ 0 1008 inb_S2048_S1024_0 inb_S2048_S16_1008 _ (by decide) (by decide) _ _ x) ?_
        refine View.forall_pieces_cons (fun x => step_trow (F := F) L fl _ 4 (by decide) (off5_blk L T1) _ 0 992 inb_S2048_S1024_0 inb_S2048_S16_992 _ (by decide) (by decide) _ _ x) ?_
        refine View.forall_pieces_cons (fun x => step_trow (F := F) L fl _ 4 (by decide) (off5_blk L T1) _ 0 976 inb_S2048_S1024_0 inb_S2048_S16_976 _ (by decide) (by decide) _ _ x) ?_
        refine View.forall_pieces_cons (fun x => step_trow (F := F) L fl _ 4 (by decide) (off5_blk L T1) _ 0 960 inb_S2048_S1024_0 inb_S2048_S16_960 _ (by decide) (by decide) _ _ x) ?_
        refine View.forall_pieces_cons (fun x => step_trow (F := F) L fl _ 4 (by decide) (off5_blk L T1) _ 0 944 inb_S2048_S1024_0 inb_S2048_S16_944 _ (by decide) (by decide) _ _ x) ?_
        refine View.forall_pieces_cons (fun x => step_trow (F := F) L fl _ 4 (by decide) (off5_blk L T1) _ 0 928 inb_S2048_S1024_0 inb_S2048_S16_928 _ (by decide) (by decide) _ _ x) ?_
        refine View.forall_pieces_cons (fun x => step_trow (F := F) L fl _ 4 (by decide) (off5_blk L T1) _ 0 912 inb_S2048_S1024_0 inb_S2048_S16_912 _ (by decide) (by decide) _ _ x) ?_
        refine View.forall_pieces_cons (fun x => step_trow (F := F) L fl _ 4 (by decide) (off5_blk L T1) _ 0 896 inb_S2048_S1024_0 inb_S2048_S16_896 _ (by decide) (by decide) _ _ x) ?_
        refine View.forall_pieces_cons (fun x => step_trow (F := F) L fl _ 4 (by decide) (off5_blk L T1) _ 0 880 inb_S2048_S1024_0 inb_S2048_S16_880 _ (by decide) (by decide) _ _ x) ?_
        refine View.forall_pieces_cons (fun x => step_trow (F := F) L fl _ 4 (by decide) (off5_blk L T1) _ 0 864 inb_S2048_S1024_0 inb_S2048_S16_864 _ (by decide) (by decide) _ _ x) ?_
        refine View.forall_pieces_cons (fun x => step_trow (F := F) L fl _ 4 (by decide) (off5_blk L T1) _ 0 848 inb_S2048_S1024_0 inb_S2048_S16_848 _ (by decide) (by decide) _ _ x) ?_
        refine View.forall_pieces_cons (fun x => step_trow (F := F) L fl _ 4 (by decide) (off5_blk L T1) _ 0 832 inb_S2048_S1024_0 inb_S2048_S16_832 _ (by decide) (by decide) _ _ x) ?_
        refine View.forall_pieces_cons (fun x => step_trow (F := F) L fl _ 4 (by decide) (off5_blk L T1) _ 0 816 inb_S2048_S1024_0 inb_S2048_S16_816 _ (by decide) (by decide) _ _ x) ?_
        refine View.forall_pieces_cons (fun x => step_trow (F := F) L fl _ 4 (by decide) (off5_blk L T1) _ 0 800 inb_S2048_S1024_0 inb_S2048_S16_800 _ (by decide) (by decide) _ _ x) ?_
        refine View.forall_pieces_cons (fun x => step_trow (F := F) L fl _ 4 (by decide) (off5_blk L T1) _ 0 784 inb_S2048_S1024_0 inb_S2048_S16_784 _ (by decide) (by decide) _ _ x) ?_
        refine View.forall_pieces_cons (fun x => step_trow (F := F) L fl _ 4 (by decide) (off5_blk L T1) _ 0 768 inb_S2048_S1024_0 inb_S2048_S16_768 _ (by decide) (by decide) _ _ x) ?_
        refine View.forall_pieces_cons (fun x => step_trow (F := F) L fl _ 4 (by decide) (off5_blk L T1) _ 0 752 inb_S2048_S1024_0 inb_S2048_S16_752 _ (by decide) (by decide) _ _ x) ?_
        refine View.forall_pieces_cons (fun x => step_trow (F := F) L fl _ 4 (by decide) (off5_blk L T1) _ 0 736 inb_S2048_S1024_0 inb_S2048_S16_736 _ (by decide) (by decide) _ _ x) ?_
        refine View.forall_pieces_cons (fun x => step_trow (F := F) L fl _ 4 (by decide) (off5_blk L T1) _ 0 720 inb_S2048_S1024_0 inb_S2048_S16_720 _ (by decide) (by decide) _ _ x) ?_
        refine View.forall_pieces_cons (fun x => step_trow (F := F) L fl _ 4 (by decide) (off5_blk L T1) _ 0 704 inb_S2048_S1024_0 inb_S2048_S16_704 _ (by decide) (by decide) _ _ x) ?_
        refine View.forall_pieces_cons (fun x => step_trow (F := F) L fl _ 4 (by decide) (off5_blk L T1) _ 0 688 inb_S2048_S1024_0 inb_S2048_S16_688 _ (by decide) (by decide) _ _ x) ?_
        refine View.forall_pieces_cons (fun x => step_trow (F := F) L fl _ 4 (by decide) (off5_blk L T1) _ 0 672 inb_S2048_S1024_0 inb_S2048_S16_672 _ (by decide) (by decide) _ _ x) ?_
        refine View.forall_pieces_cons (fun x => step_trow (F := F) L fl _ 4 (by decide) (off5_blk L T1) _ 0 656 inb_S2048_S1024_0 inb_S2048_S16_656 _ (by decide) (by decide) _ _ x) ?_
        refine View.forall_pieces_cons (fun x => step_trow (F := F) L fl _ 4 (by decide) (off5_blk L T1) _ 0 640 inb_S2048_S1024_0 inb_S2048_S16_640 _ (by decide) (by decide) _ _ x) ?_
        refine View.forall_pieces_cons (fun x => step_trow (F := F) L fl _ 4 (by decide) (off5_blk L T1) _ 0 624 inb_S2048_S1024_0 inb_S2048_S16_624 _ (by decide) (by decide) _ _ x) ?_
        refine View.forall_pieces_cons (fun x => step_trow (F := F) L fl _ 4 (by decide) (off5_blk L T1) _ 0 608 inb_S2048_S1024_0 inb_S2048_S16_608 _ (by decide) (by decide) _ _ x) ?_
        refine View.forall_pieces_cons (fun x => step_trow (F := F) L fl _ 4 (by decide) (off5_blk L T1) _ 0 592 inb_S2048_S1024_0 inb_S2048_S16_592 _ (by decide) (by decide) _ _ x) ?_
        refine View.forall_pieces_cons (fun x => step_trow (F := F) L fl _ 4 (by decide) (off5_blk L T1) _ 0 576 inb_S2048_S1024_0 inb_S2048_S16_576 _ (by decide) (by decide) _ _ x) ?_
        refine View.forall_pieces_cons (fun x => step_trow (F := F) L fl _ 4 (by decide) (off5_blk L T1) _ 0 560 inb_S2048_S1024_0 inb_S2048_S16_560 _ (by decide) (by decide) _ _ x) ?_
        refine View.forall_pieces_cons (fun x => step_trow (F := F) L fl _ 4 (by decide) (off5_blk L T1) _ 0 544 inb_S2048_S1024_0 inb_S2048_S16_544 _ (by decide) (by decide) _ _ x) ?_
        refine View.forall_pieces_cons (fun x => step_trow (F := F) L fl _ 4 (by decide) (off5_blk L T1) _ 0 528 inb_S2048_S1024_0 inb_S2048_S16_528 _ (by decide) (by decide) _ _ x) ?_
        refine View.forall_pieces_cons (fun x => step_trow (F := F) L fl _ 4 (by decide) (off5_blk L T1) _ 0 512 inb_S2048_S1024_0 inb_S2048_S16_512 _ (by decide) (by decide) _ _ x) ?_
        refine View.forall_pieces_cons (fun x => step_trow (F := F) L fl _ 4 (by decide) (off5_blk L T1) _ 0 496 inb_S2048_S1024_0 inb_S2048_S16_496 _ (by decide) (by decide) _ _ x) ?_
        refine View.forall_pieces_cons (fun x => step_trow (F := F) L fl _ 4 (by decide) (off5_blk L T1) _ 0 480 inb_S2048_S1024_0 inb_S2048_S16_480 _ (by decide) (by decide) _ _ x) ?_
        refine View.forall_pieces_cons (fun x => step_trow (F := F) L fl _ 4 (by decide) (off5_blk L T1) _ 0 464 inb_S2048_S1024_0 inb_S2048_S16_464 _ (by decide) (by decide) _ _ x) ?_
        refine View.forall_pieces_cons (fun x => step_trow (F := F) L fl _ 4 (by decide) (off5_blk L T1) _ 0 448 inb_S2048_S1024_0 inb_S2048_S16_448 _ (by decide) (by decide) _ _ x) ?_
        refine View.forall_pieces_cons (fun x => step_trow (F := F) L fl _ 4 (by decide) (off5_blk L T1) _ 0 432 inb_S2048_S1024_0 inb_S2048_S16_432 _ (by decide) (by decide) _ _ x) ?_
        refine View.forall_pieces_cons (fun x => step_trow (F := F) L fl _ 4 (by decide) (off5_blk L T1) _ 0 416 inb_S2048_S1024_0 inb_S2048_S16_416 _ (by decide) (by decide) _ _ x) ?_
        refine View.forall_pieces_cons (fun x => step_trow (F := F) L fl _ 4 (by decide) (off5_blk L T1) _ 0 400 inb_S2048_S1024_0 inb_S2048_S16_400 _ (by decide) (by decide) _ _ x) ?_
        refine View.forall_pieces_cons (fun x => step_trow (F := F) L fl _ 4 (by decide) (off5_blk L T1) _ 0 384 inb_S2048_S1024_0 inb_S2048_S16_384 _ (by decide) (by decide) _ _ x) ?_
        refine View.forall_pieces_cons (fun x => step_trow (F := F) L fl _ 4 (by decide) (off5_blk L T1) _ 0 368 inb_S2048_S1024_0 inb_S2048_S16_368 _ (by decide) (by decide) _ _ x) ?_
        refine View.forall_pieces_cons (fun x => step_trow (F := F) L fl _ 4 (by decide) (off5_blk L T1) _ 0 352 inb_S2048_S1024_0 inb_S2048_S16_352 _ (by decide) (by decide) _ _ x) ?_
        refine View.forall_pieces_cons (fun x => step_trow (F := F) L fl _ 4 (by decide) (off5_blk L T1) _ 0 336 inb_S2048_S1024_0 inb_S2048_S16_336 _ (by decide) (by decide) _ _ x) ?_
        refine View.forall_pieces_cons (fun x => step_trow (F := F) L fl _ 4 (by decide) (off5_blk L T1) _ 0 320 inb_S2048_S1024_0 inb_S2048_S16_320 _ (by decide) (by decide) _ _ x) ?_
        refine View.forall_pieces_cons (fun x => step_trow (F := F) L fl _ 4 (by decide) (off5_blk L T1) _ 0 304 inb_S2048_S1024_0 inb_S2048_S16_304 _ (by decide) (by decide) _ _ x) ?_
        refine View.forall_pieces_cons (fun x => step_trow (F := F) L fl _ 4 (by decide) (off5_blk L T1) _ 0 288 inb_S2048_S1024_0 inb_S2048_S16_288 _ (by decide) (by decide) _ _ x) ?_
        refine View.forall_pieces_cons (fun x => step_trow (F := F) L fl _ 4 (by decide) (off5_blk L T1) _ 0 272 inb_S2048_S1024_0 inb_S2048_S16_272 _ (by decide) (by decide) _ _ x) ?_
        refine View.forall_pieces_cons (fun x => step_trow (F := F) L fl _ 4 (by decide) (off5_blk L T1) _ 0 256 inb_S2048_S1024_0 inb_S2048_S16_256 _ (by decide) (by decide) _ _ x) ?_
        refine View.forall_pieces_cons (fun x => step_trow (F := F) L fl _ 4 (by decide) (off5_blk L T1) _ 0 240 inb_S2048_S1024_0 inb_S2048_S16_240 _ (by decide) (by decide) _ _ x) ?_
        refine View.forall_pieces_cons (fun x => step_trow (F := F) L fl _ 4 (by decide) (off5_blk L T1) _ 0 224 inb_S2048_S1024_0 inb_S2048_S16_224 _ (by decide) (by decide) _ _ x) ?_
        refine View.forall_pieces_cons (fun x => step_trow (F := F) L fl _ 4 (by decide) (off5_blk L T1) _ 0 208 inb_S2048_S1024_0 inb_S2048_S16_208 _ (by decide) (by decide) _ _ x) ?_
        refine View.forall_pieces_cons (fun x => step_trow (F := F) L fl _ 4 (by decide) (off5_blk L T1) _ 0 192 inb_S2048_S1024_0 inb_S2048_S16_192 _ (by decide) (by decide) _ _ x) ?_
        refine View.forall_pieces_cons (fun x => step_trow (F := F) L fl _ 4 (by decide) (off5_blk L T1) _ 0 176 inb_S2048_S1024_0 inb_S2048_S16_176 _ (by decide) (by decide) _ _ x) ?_
        refine View.forall_pieces_cons (fun x => step_trow (F := F) L fl _ 4 (by decide) (off5_blk L T1) _ 0 160 inb_S2048_S1024_0 inb_S2048_S16_160 _ (by decide) (by decide) _ _ x) ?_
        refine View.forall_pieces_cons (fun x => step_trow (F := F) L fl _ 4 (by decide) (off5_blk L T1) _ 0 144 inb_S2048_S1024_0 inb_S2048_S16_144 _ (by decide) (by decide) _ _ x) ?_
        refine View.forall_pieces_cons (fun x => step_trow (F := F) L fl _ 4 (by decide) (off5_blk L T1) _ 0 128 inb_S2048_S1024_0 inb_S2048_S16_128 _ (by decide) (by decide) _ _ x) ?_
        refine View.forall_pieces_cons (fun x => step_trow (F := F) L fl _ 4 (by decide) (off5_blk L T1) _ 0 112 inb_S2048_S1024_0 inb_S2048_S16_112 _ (by decide) (by decide) _ _ x) ?_
        refine View.forall_pieces_cons (fun x => step_trow (F := F) L fl _ 4 (by decide) (off5_blk L T1) _ 0 96 inb_S2048_S1024_0 inb_S2048_S16_96 _ (by decide) (by decide) _ _ x) ?_
        refine View.forall_pieces_cons (fun x => step_trow (F := F) L fl _ 4 (by decide) (off5_blk L T1) _ 0 80 inb_S2048_S1024_0 inb_S2048_S16_80 _ (by decide) (by decide) _ _ x) ?_
        refine View.forall_pieces_cons (fun x => step_trow (F := F) L fl _ 4 (by decide) (off5_blk L T1) _ 0 64 inb_S2048_S1024_0 inb_S2048_S16_64 _ (by decide) (by decide) _ _ x) ?_
        refine View.forall_pieces_cons (fun x => step_trow (F := F) L fl _ 4 (by decide) (off5_blk L T1) _ 0 48 inb_S2048_S1024_0 inb_S2048_S16_48 _ (by decide) (by decide) _ _ x) ?_
        refine View.forall_pieces_cons (fun x => step_trow (F := F) L fl _ 4 (by decide) (off5_blk L T1) _ 0 32 inb_S2048_S1024_0 inb_S2048_S16_32 _ (by decide) (by decide) _ _ x) ?_
        refine View.forall_pieces_cons (fun x => step_trow (F := F) L fl _ 4 (by decide) (off5_blk L T1) _ 0 16 inb_S2048_S1024_0 inb_S2048_S16_16 _ (by decide) (by decide) _ _ x) ?_
        refine View.forall_pieces_cons (fun x => step_trow (F := F) L fl _ 4 (by decide) (off5_blk L T1) _ 0 0 inb_S2048_S1024_0 inb_S2048_S16_0 _ (by decide) (by decide) _ _ x) ?_
        exact View.forall_pieces_nil
      ·
        refine View.forall_pieces_cons (fun x => step_tcol (F := F) L fl _ 4 (by decide) (off5_blk L T1) _ 0 1008 inb_S2048_S1024_0 inb_S2048_S16_1008 _ (by decide) (by decide) _ _ x) ?_
        refine View.forall_pieces_cons (fun x => step_tcol (F := F) L fl _ 4 (by decide) (off5_blk L T1) _ 0 992 inb_S2048_S1024_0 inb_S2048_S16_992 _ (by decide) (by decide) _ _ x) ?_
        refine View.forall_pieces_cons (fun x => step_tcol (F := F) L fl _ 4 (by decide) (off5_blk L T1) _ 0 976 inb_S2048_S1024_0 inb_S2048_S16_976 _ (by decide) (by decide) _ _ x) ?_
        refine View.forall_pieces_cons (fun x => step_tcol (F := F) L fl _ 4 (by decide) (off5_blk L T1) _ 0 960 inb_S2048_S1024_0 inb_S2048_S16_960 _ (by decide) (by decide) _ _ x) ?_
        refine View.forall_pieces_cons (fun x => step_tcol (F := F) L fl _ 4 (by decide) (off5_blk L T1) _ 0 944 inb_S2048_S1024_0 inb_S2048_S16_944 _ (by decide) (by decide) _ _ x) ?_
        refine View.forall_pieces_cons (fun x => step_tcol (F := F) L fl _ 4 (by decide) (off5_blk L T1) _ 0 928 inb_S2048_S1024_0 inb_S2048_S16_928 _ (by decide) (by decide) _ _ x) ?_
        refine View.forall_pieces_cons (fun x => step_tcol (F := F) L fl _ 4 (by decide) (off5_blk L T1) _ 0 912 inb_S2048_S1024_0 inb_S2048_S16_912 _ (by decide) (by decide) _ _ x) ?_
        refine View.forall_pieces_cons (fun x => step_tcol (F := F) L fl _ 4 (by decide) (off5_blk L T1) _ 0 896 inb_S2048_S1024_0 inb_S2048_S16_896 _ (by decide) (by decide) _ _ x) ?_
        refine View.forall_pieces_cons (fun x => step_tcol (F := F) L fl _ 4 (by decide) (off5_blk L T1) _ 0 880 inb_S2048_S1024_0 inb_S2048_S16_880 _ (by decide) (by decide) _ _ x) ?_
        refine View.forall_pieces_cons (fun x => step_tcol (F := F) L fl _ 4 (by decide) (off5_blk L T1) _ 0 864 inb_S2048_S1024_0 inb_S2048_S16_864 _ (by decide) (by decide) _ _ x) ?_
        refine View.forall_pieces_cons (fun x => step_tcol (F := F) L fl _ 4 (by decide) (off5_blk L T1) _ 0 848 inb_S2048_S1024_0 inb_S2048_S16_848 _ (by decide) (by decide) _ _ x) ?_
        refine View.forall_pieces_cons (fun x => step_tcol (F := F) L fl _ 4 (by decide) (off5_blk L T1) _ 0 832 inb_S2048_S1024_0 inb_S2048_S16_832 _ (by decide) (by decide) _ _ x) ?_
        refine View.forall_pieces_cons (fun x => step_tcol (F := F) L fl _ 4 (by decide) (off5_blk L T1) _ 0 816 inb_S2048_S1024_0 inb_S2048_S16_816 _ (by decide) (by decide) _ _ x) ?_
        refine View.forall_pieces_cons (fun x => step_tcol (F := F) L fl _ 4 (by decide) (off5_blk L T1) _ 0 800 inb_S2048_S1024_0 inb_S2048_S16_800 _ (by decide) (by decide) _ _ x) ?_
        refine View.forall_pieces_cons (fun x => step_tcol (F := F) L fl _ 4 (by decide) (off5_blk L T1) _ 0 784 inb_S2048_S1024_0 inb_S2048_S16_784 _ (by decide) (by decide) _ _ x) ?_
        refine View.forall_pieces_cons (fun x => step_tcol (F := F) L fl _ 4 (by decide) (off5_blk L T1) _ 0 768 inb_S2048_S1024_0 inb_S2048_S16_768 _ (by decide) (by decide) _ _ x) ?_
        refine View.forall_pieces_cons (fun x => step_tcol (F := F) L fl _ 4 (by decide) (off5_blk L T1) _ 0 752 inb_S2048_S1024_0 inb_S2048_S16_752 _ (by decide) (by decide) _ _ x) ?_
        refine View.forall_pieces_cons (fun x => step_tcol (F := F) L fl _ 4 (by decide) (off5_blk L T1) _ 0 736 inb_S2048_S1024_0 inb_S2048_S16_736 _ (by decide) (by decide) _ _ x) ?_
        refine View.forall_pieces_cons (fun x => step_tcol (F := F) L fl _ 4 (by decide) (off5_blk L T1) _ 0 720 inb_S2048_S1024_0 inb_S2048_S16_720 _ (by decide) (by decide) _ _ x) ?_
        refine View.forall_pieces_cons (fun x => step_tcol (F := F) L fl _ 4 (by decide) (off5_blk L T1) _ 0 704 inb_S2048_S1024_0 inb_S2048_S16_704 _ (by decide) (by decide) _ _ x) ?_
        refine View.forall_pieces_cons (fun x => step_tcol (F := F) L fl _ 4 (by decide) (off5_blk L T1) _ 0 688 inb_S2048_S1024_0 inb_S2048_S16_688 _ (by decide) (by decide) _ _ x) ?_
        refine View.forall_pieces_cons (fun x => step_tcol (F := F) L fl _ 4 (by decide) (off5_blk L T1) _ 0 672 inb_S2048_S1024_0 inb_S2048_S16_672 _ (by decide) (by decide) _ _ x) ?_
        refine View.forall_pieces_cons (fun x => step_tcol (F := F) L fl _ 4 (by decide) (off5_blk L T1) _ 0 656 inb_S2048_S1024_0 inb_S2048_S16_656 _ (by decide) (by decide) _ _ x) ?_
        refine View.forall_pieces_cons (fun x => step_tcol (F := F) L fl _ 4 (by decide) (off5_blk L T1) _ 0 640 inb_S2048_S1024_0 inb_S2048_S16_640 _ (by decide) (by decide) _ _ x) ?_
        refine View.forall_pieces_cons (fun x => step_tcol (F := F) L fl _ 4 (by decide) (off5_blk L T1) _ 0 624 inb_S2048_S1024_0 inb_S2048_S16_624 _ (by decide) (by decide) _ _ x) ?_
        refine View.forall_pieces_cons (fun x => step_tcol (F := F) L fl _ 4 (by decide) (off5_blk L T1) _ 0 608 inb_S2048_S1024_0 inb_S2048_S16_608 _ (by decide) (by decide) _ _ x) ?_
        refine View.forall_pieces_cons (fun x => step_tcol (F := F) L fl _ 4 (by decide) (off5_blk L T1) _ 0 592 inb_S2048_S1024_0 inb_S2048_S16_592 _ (by decide) (by decide) _ _ x) ?_
        refine View.forall_pieces_cons (fun x => step_tcol (F := F) L fl _ 4 (by decide) (off5_blk L T1) _ 0 576 inb_S2048_S1024_0 inb_S2048_S16_576 _ (by decide) (by decide) _ _ x) ?_
        refine View.forall_pieces_cons (fun x => step_tcol (F := F) L fl _ 4 (by decide) (off5_blk L T1) _ 0 560 inb_S2048_S1024_0 inb_S2048_S16_560 _ (by decide) (by decide) _ _ x) ?_
        refine View.forall_pieces_cons (fun x => step_tcol (F := F) L fl _ 4 (by decide) (off5_blk L T1) _ 0 544 inb_S2048_S1024_0 inb_S2048_S16_544 _ (by decide) (by decide) _ _ x) ?_
        refine View.forall_pieces_cons (fun x => step_tcol (F := F) L fl _ 4 (by decide) (off5_blk L T1) _ 0 528 inb_S2048_S1024_0 inb_S2048_S16_528 _ (by decide) (by decide) _ _ x) ?_
        refine View.forall_pieces_cons (fun x => step_tcol (F := F) L fl _ 4 (by decide) (off5_blk L T1) _ 0 512 inb_S2048_S1024_0 inb_S2048_S16_512 _ (by decide) (by decide) _ _ x) ?_
        refine View.forall_pieces_cons (fun x => step_tcol (F := F) L fl _ 4 (by decide) (off5_blk L T1) _ 0 496 inb_S2048_S1024_0 inb_S2048_S16_496 _ (by decide) (by decide) _ _ x) ?_
        refine View.forall_pieces_cons (fun x => step_tcol (F := F) L fl _ 4 (by decide) (off5_blk L T1) _ 0 480 inb_S2048_S1024_0 inb_S2048_S16_480 _ (by decide) (by decide) _ _ x) ?_
        refine View.forall_pieces_cons (fun x => step_tcol (F := F) L fl _ 4 (by decide) (off5_blk L T1) _ 0 464 inb_S2048_S1024_0 inb_S2048_S16_464 _ (by decide) (by decide) _ _ x) ?_
        refine View.forall_pieces_cons (fun x => step_tcol (F := F) L fl _ 4 (by decide) (off5_blk L T1) _ 0 448 inb_S2048_S1024_0 inb_S2048_S16_448 _ (by decide) (by decide) _ _ x) ?_
        refine View.forall_pieces_cons (fun x => step_tcol (F := F) L fl _ 4 (by decide) (off5_blk L T1) _ 0 432 inb_S2048_S1024_0 inb_S2048_S16_432 _ (by decide) (by decide) _ _ x) ?_
        refine View.forall_pieces_cons (fun x => step_tcol (F := F) L fl _ 4 (by decide) (off5_blk L T1) _ 0 416 inb_S2048_S1024_0 inb_S2048_S16_416 _ (by decide) (by decide) _ _ x) ?_
        refine View.forall_pieces_cons (fun x => step_tcol (F := F) L fl _ 4 (by decide) (off5_blk L T1) _ 0 400 inb_S2048_S1024_0 inb_S2048_S16_400 _ (by decide) (by decide) _ _ x) ?_
        refine View.forall_pieces_cons (fun x => step_tcol (F := F) L fl _ 4 (by decide) (off5_blk L T1) _ 0 384 inb_S2048_S1024_0 inb_S2048_S16_384 _ (by decide) (by decide) _ _ x) ?_
        refine View.forall_pieces_cons (fun x => step_tcol (F := F) L fl _ 4 (by decide) (off5_blk L T1) _ 0 368 inb_S2048_S1024_0 inb_S2048_S16_368 _ (by decide) (by decide) _ _ x) ?_
        refine View.forall_pieces_cons (fun x => step_tcol (F := F) L fl _ 4 (by decide) (off5_blk L T1) _ 0 352 inb_S2048_S1024_0 inb_S2048_S16_352 _ (by decide) (by decide) _ _ x) ?_
        refine View.forall_pieces_cons (fun x => step_tcol (F := F) L fl _ 4 (by decide) (off5_blk L T1) _ 0 336 inb_S2048_S1024_0 inb_S2048_S16_336 _ (by decide) (by decide) _ _ x) ?_
        refine View.forall_pieces_cons (fun x => step_tcol (F := F) L fl _ 4 (by decide) (off5_blk L T1) _ 0 320 inb_S2048_S1024_0 inb_S2048_S16_320 _ (by decide) (by decide) _ _ x) ?_
        refine View.forall_pieces_cons (fun x => step_tcol (F := F) L fl _ 4 (by decide) (off5_blk L T1) _ 0 304 inb_S2048_S1024_0 inb_S2048_S16_304 _ (by decide) (by decide) _ _ x) ?_
        refine View.forall_pieces_cons (fun x => step_tcol (F := F) L fl _ 4 (by decide) (off5_blk L T1) _ 0 288 inb_S2048_S1024_0 inb_S2048_S16_288 _ (by decide) (by decide) _ _ x) ?_
        refine View.forall_pieces_cons (fun x => step_tcol (F := F) L fl _ 4 (by decide) (off5_blk L T1) _ 0 272 inb_S2048_S1024_0 inb_S2048_S16_272 _ (by decide) (by decide) _ _ x) ?_
        refine View.forall_pieces_cons (fun x => step_tcol (F := F) L fl _ 4 (by decide) (off5_blk L T1) _ 0 256 inb_S2048_S1024_0 inb_S2048_S16_256 _ (by decide) (by decide) _ _ x) ?_
        refine View.forall_pieces_cons (fun x => step_tcol (F := F) L fl _ 4 (by decide) (off5_blk L T1) _ 0 240 inb_S2048_S1024_0 inb_S2048_S16_240 _ (by decide) (by decide) _ _ x) ?_
        refine View.forall_pieces_cons (fun x => step_tcol (F := F) L fl _ 4 (by decide) (off5_blk L T1) _ 0 224 inb_S2048_S1024_0 inb_S2048_S16_224 _ (by decide) (by decide) _ _ x) ?_
        refine View.forall_pieces_cons (fun x => step_tcol (F := F) L fl _ 4 (by decide) (off5_blk L T1) _ 0 208 inb_S2048_S1024_0 inb_S2048_S16_208 _ (by decide) (by decide) _ _ x) ?_
        refine View.forall_pieces_cons (fun x => step_tcol (F := F) L fl _ 4 (by decide) (off5_blk L T1) _ 0 192 inb_S2048_S1024_0 inb_S2048_S16_192 _ (by decide) (by decide) _ _ x) ?_
        refine View.forall_pieces_cons (fun x => step_tcol (F := F) L fl _ 4 (by decide) (off5_blk L T1) _ 0 176 inb_S2048_S1024_0 inb_S2048_S16_176 _ (by decide) (by decide) _ _ x) ?_
        refine View.forall_pieces_cons (fun x => step_tcol (F := F) L fl _ 4 (by decide) (off5_blk L T1) _ 0 160 inb_S2048_S1024_0 inb_S2048_S16_160 _ (by decide) (by decide) _ _ x) ?_
        refine View.forall_pieces_cons (fun x => step_tcol (F := F) L fl _ 4 (by decide) (off5_blk L T1) _ 0 144 inb_S2048_S1024_0 inb_S2048_S16_144 _ (by decide) (by decide) _ _ x) ?_
        refine View.forall_pieces_cons (fun x => step_tcol (F := F) L fl _ 4 (by decide) (off5_blk L T1) _ 0 128 inb_S2048_S1024_0 inb_S2048_S16_128 _ (by decide) (by decide) _ _ x) ?_
        refine View.forall_pieces_cons (fun x => step_tcol (F := F) L fl _ 4 (by decide) (off5_blk L T1) _ 0 112 inb_S2048_S1024_0 inb_S2048_S16_112 _ (by decide) (by decide) _ _ x) ?_
        refine View.forall_pieces_cons (fun x => step_tcol (F := F) L fl _ 4 (by decide) (off5_blk L T1) _ 0 96 inb_S2048_S1024_0 inb_S2048_S16_96 _ (by decide) (by decide) _ _ x) ?_
        refine View.forall_pieces_cons (fun x => step_tcol (F := F) L fl _ 4 (by decide) (off5_blk L T1) _ 0 80 inb_S2048_S1024_0 inb_S2048_S16_80 _ (by decide) (by decide) _ _ x) ?_
        refine View.forall_pieces_cons (fun x => step_tcol (F := F) L fl _ 4 (by decide) (off5_blk L T1) _ 0 64 inb_S2048_S1024_0 inb_S2048_S16_64 _ (by decide) (by decide) _ _ x) ?_
        refine View.forall_pieces_cons (fun x => step_tcol (F := F) L fl _ 4 (by decide) (off5_blk L T1) _ 0 48 inb_S2048_S1024_0 inb_S2048_S16_48 _ (by decide) (by decide) _ _ x) ?_
        refine View.forall_pieces_cons (fun x => step_tcol (F := F) L fl _ 4 (by decide) (off5_blk L T1) _ 0 32 inb_S2048_S1024_0 inb_S2048_S16_32 _ (by decide) (by decide) _ _ x) ?_
        refine View.forall_pieces_cons (fun x => step_tcol (F := F) L fl _ 4 (by decide) (off5_blk L T1) _ 0 16 inb_S2048_S1024_0 inb_S2048_S16_16 _ (by decide) (by decide) _ _ x) ?_
        refine View.forall_pieces_cons (fun x => step_tcol (F := F) L fl _ 4 (by decide) (off5_blk L T1) _ 0 0 inb_S2048_S1024_0 inb_S2048_S16_0 _ (by decide) (by decide) _ _ x) ?_
        exact View.forall_pieces_nil
  rw [inv1_flight (F := F) d L fl qt tab O _ 3 _ (Or.inr (by decide))]
  iintro %_ HI
  unfold invF
  icases HI with ⟨-, %r3, %g13, %g23, %wb3, %o3, %ho3, ⟨%hT3, %hR3, %ho3_eq, %hV3⟩, Hg0, H1, Ht, H3, H2, H4r, Hg1, %W3, %hW3, HO⟩
  obtain rfl : o3 = ![0] := ho3_eq.trans e81
  have hin3 := hin_of d L g13 hT3
  sl_exec_parts (disch := decide)
  -- even block 4
  ihave H4j := (wb_join_a (F := F) d L _ _) $$ [H4r_2 H4r]
  · isplitl [H4r_2] <;> iassumption
  sl_for (inv0 d L fl qt tab O (insert (SemLoc.dma cc1_scratch8.sem, (default : HIx 1)) (insert (SemLoc.dma cc1_scratch9.sem, (default : HIx 1)) W3)) 4) $$ [Hmw Hg0 Ht H3 H1 H2 H4j Hg1 HO]
  case region => intro k _; exact pair0_region d L fl qt tab O _ 0#32 0#32 T2 _ k
  ·
    unfold inv0
    isplitl [Hmw]; · iexact Hmw
    iexists _; iexists _; iexists _; iexists _; iexists ![0]; iexists ho3
    isplitr; rotate_left
    · isplitl [Hg0]; rotate_left
      · isplitl [H1]; · iexact H1
        isplitl [Ht]; · iexact Ht
        isplitl [H3]; · iexact H3
        isplitl [H2]; · iexact H2
        isplitl [H4j]; · iexact H4j
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A4: the list's fifty words are not touched by the later stores
          intro i hi
          have hi0 := (mem_listM _ _ i).mp hi
          simp only [Matrix.cons_val_zero] at hi0
          exact (keep_word d L _ _ 1024 (by rfl) i (by omega)).symm
    · ipureintro
      -- HOLE B4: the values at the loop's entry
      obtain ⟨hTh, hRh, hRowsh⟩ := odd_to_even d L fl tab 3 (by decide) _ _ _ _ hV3
      have_entry even_entry
      refine key hfl hTh hRh hRowsh ?_ (by rfl) ?_ (by rfl) (by unfold lo; rfl)
      ·
        refine View.forall_pieces_cons (fun x => step_trow (F := F) L fl _ 5 (by decide) (off62_blk L T1) _ 1024 2032 inb_S2048_S1024_1024 inb_S2048_S16_2032 _ (by decide) (by decide) _ _ x) ?_
        refine View.forall_pieces_cons (fun x => step_trow (F := F) L fl _ 5 (by decide) (off62_blk L T1) _ 1024 2016 inb_S2048_S1024_1024 inb_S2048_S16_2016 _ (by decide) (by decide) _ _ x) ?_
        refine View.forall_pieces_cons (fun x => step_trow (F := F) L fl _ 5 (by decide) (off62_blk L T1) _ 1024 2000 inb_S2048_S1024_1024 inb_S2048_S16_2000 _ (by decide) (by decide) _ _ x) ?_
        refine View.forall_pieces_cons (fun x => step_trow (F := F) L fl _ 5 (by decide) (off62_blk L T1) _ 1024 1984 inb_S2048_S1024_1024 inb_S2048_S16_1984 _ (by decide) (by decide) _ _ x) ?_
        refine View.forall_pieces_cons (fun x => step_trow (F := F) L fl _ 5 (by decide) (off62_blk L T1) _ 1024 1968 inb_S2048_S1024_1024 inb_S2048_S16_1968 _ (by decide) (by decide) _ _ x) ?_
        refine View.forall_pieces_cons (fun x => step_trow (F := F) L fl _ 5 (by decide) (off62_blk L T1) _ 1024 1952 inb_S2048_S1024_1024 inb_S2048_S16_1952 _ (by decide) (by decide) _ _ x) ?_
        refine View.forall_pieces_cons (fun x => step_trow (F := F) L fl _ 5 (by decide) (off62_blk L T1) _ 1024 1936 inb_S2048_S1024_1024 inb_S2048_S16_1936 _ (by decide) (by decide) _ _ x) ?_
        refine View.forall_pieces_cons (fun x => step_trow (F := F) L fl _ 5 (by decide) (off62_blk L T1) _ 1024 1920 inb_S2048_S1024_1024 inb_S2048_S16_1920 _ (by decide) (by decide) _ _ x) ?_
        refine View.forall_pieces_cons (fun x => step_trow (F := F) L fl _ 5 (by decide) (off62_blk L T1) _ 1024 1904 inb_S2048_S1024_1024 inb_S2048_S16_1904 _ (by decide) (by decide) _ _ x) ?_
        refine View.forall_pieces_cons (fun x => step_trow (F := F) L fl _ 5 (by decide) (off62_blk L T1) _ 1024 1888 inb_S2048_S1024_1024 inb_S2048_S16_1888 _ (by decide) (by decide) _ _ x) ?_
        refine View.forall_pieces_cons (fun x => step_trow (F := F) L fl _ 5 (by decide) (off62_blk L T1) _ 1024 1872 inb_S2048_S1024_1024 inb_S2048_S16_1872 _ (by decide) (by decide) _ _ x) ?_
        refine View.forall_pieces_cons (fun x => step_trow (F := F) L fl _ 5 (by decide) (off62_blk L T1) _ 1024 1856 inb_S2048_S1024_1024 inb_S2048_S16_1856 _ (by decide) (by decide) _ _ x) ?_
        refine View.forall_pieces_cons (fun x => step_trow (F := F) L fl _ 5 (by decide) (off62_blk L T1) _ 1024 1840 inb_S2048_S1024_1024 inb_S2048_S16_1840 _ (by decide) (by decide) _ _ x) ?_
        refine View.forall_pieces_cons (fun x => step_trow (F := F) L fl _ 5 (by decide) (off62_blk L T1) _ 1024 1824 inb_S2048_S1024_1024 inb_S2048_S16_1824 _ (by decide) (by decide) _ _ x) ?_
        refine View.forall_pieces_cons (fun x => step_trow (F := F) L fl _ 5 (by decide) (off62_blk L T1) _ 1024 1808 inb_S2048_S1024_1024 inb_S2048_S16_1808 _ (by decide) (by decide) _ _ x) ?_
        refine View.forall_pieces_cons (fun x => step_trow (F := F) L fl _ 5 (by decide) (off62_blk L T1) _ 1024 1792 inb_S2048_S1024_1024 inb_S2048_S16_1792 _ (by decide) (by decide) _ _ x) ?_
        refine View.forall_pieces_cons (fun x => step_trow (F := F) L fl _ 5 (by decide) (off62_blk L T1) _ 1024 1776 inb_S2048_S1024_1024 inb_S2048_S16_1776 _ (by decide) (by decide) _ _ x) ?_
        refine View.forall_pieces_cons (fun x => step_trow (F := F) L fl _ 5 (by decide) (off62_blk L T1) _ 1024 1760 inb_S2048_S1024_1024 inb_S2048_S16_1760 _ (by decide) (by decide) _ _ x) ?_
        refine View.forall_pieces_cons (fun x => step_trow (F := F) L fl _ 5 (by decide) (off62_blk L T1) _ 1024 1744 inb_S2048_S1024_1024 inb_S2048_S16_1744 _ (by decide) (by decide) _ _ x) ?_
        refine View.forall_pieces_cons (fun x => step_trow (F := F) L fl _ 5 (by decide) (off62_blk L T1) _ 1024 1728 inb_S2048_S1024_1024 inb_S2048_S16_1728 _ (by decide) (by decide) _ _ x) ?_
        refine View.forall_pieces_cons (fun x => step_trow (F := F) L fl _ 5 (by decide) (off62_blk L T1) _ 1024 1712 inb_S2048_S1024_1024 inb_S2048_S16_1712 _ (by decide) (by decide) _ _ x) ?_
        refine View.forall_pieces_cons (fun x => step_trow (F := F) L fl _ 5 (by decide) (off62_blk L T1) _ 1024 1696 inb_S2048_S1024_1024 inb_S2048_S16_1696 _ (by decide) (by decide) _ _ x) ?_
        refine View.forall_pieces_cons (fun x => step_trow (F := F) L fl _ 5 (by decide) (off62_blk L T1) _ 1024 1680 inb_S2048_S1024_1024 inb_S2048_S16_1680 _ (by decide) (by decide) _ _ x) ?_
        refine View.forall_pieces_cons (fun x => step_trow (F := F) L fl _ 5 (by decide) (off62_blk L T1) _ 1024 1664 inb_S2048_S1024_1024 inb_S2048_S16_1664 _ (by decide) (by decide) _ _ x) ?_
        refine View.forall_pieces_cons (fun x => step_trow (F := F) L fl _ 5 (by decide) (off62_blk L T1) _ 1024 1648 inb_S2048_S1024_1024 inb_S2048_S16_1648 _ (by decide) (by decide) _ _ x) ?_
        refine View.forall_pieces_cons (fun x => step_trow (F := F) L fl _ 5 (by decide) (off62_blk L T1) _ 1024 1632 inb_S2048_S1024_1024 inb_S2048_S16_1632 _ (by decide) (by decide) _ _ x) ?_
        refine View.forall_pieces_cons (fun x => step_trow (F := F) L fl _ 5 (by decide) (off62_blk L T1) _ 1024 1616 inb_S2048_S1024_1024 inb_S2048_S16_1616 _ (by decide) (by decide) _ _ x) ?_
        refine View.forall_pieces_cons (fun x => step_trow (F := F) L fl _ 5 (by decide) (off62_blk L T1) _ 1024 1600 inb_S2048_S1024_1024 inb_S2048_S16_1600 _ (by decide) (by decide) _ _ x) ?_
        refine View.forall_pieces_cons (fun x => step_trow (F := F) L fl _ 5 (by decide) (off62_blk L T1) _ 1024 1584 inb_S2048_S1024_1024 inb_S2048_S16_1584 _ (by decide) (by decide) _ _ x) ?_
        refine View.forall_pieces_cons (fun x => step_trow (F := F) L fl _ 5 (by decide) (off62_blk L T1) _ 1024 1568 inb_S2048_S1024_1024 inb_S2048_S16_1568 _ (by decide) (by decide) _ _ x) ?_
        refine View.forall_pieces_cons (fun x => step_trow (F := F) L fl _ 5 (by decide) (off62_blk L T1) _ 1024 1552 inb_S2048_S1024_1024 inb_S2048_S16_1552 _ (by decide) (by decide) _ _ x) ?_
        refine View.forall_pieces_cons (fun x => step_trow (F := F) L fl _ 5 (by decide) (off62_blk L T1) _ 1024 1536 inb_S2048_S1024_1024 inb_S2048_S16_1536 _ (by decide) (by decide) _ _ x) ?_
        refine View.forall_pieces_cons (fun x => step_trow (F := F) L fl _ 5 (by decide) (off62_blk L T1) _ 1024 1520 inb_S2048_S1024_1024 inb_S2048_S16_1520 _ (by decide) (by decide) _ _ x) ?_
        refine View.forall_pieces_cons (fun x => step_trow (F := F) L fl _ 5 (by decide) (off62_blk L T1) _ 1024 1504 inb_S2048_S1024_1024 inb_S2048_S16_1504 _ (by decide) (by decide) _ _ x) ?_
        refine View.forall_pieces_cons (fun x => step_trow (F := F) L fl _ 5 (by decide) (off62_blk L T1) _ 1024 1488 inb_S2048_S1024_1024 inb_S2048_S16_1488 _ (by decide) (by decide) _ _ x) ?_
        refine View.forall_pieces_cons (fun x => step_trow (F := F) L fl _ 5 (by decide) (off62_blk L T1) _ 1024 1472 inb_S2048_S1024_1024 inb_S2048_S16_1472 _ (by decide) (by decide) _ _ x) ?_
        refine View.forall_pieces_cons (fun x => step_trow (F := F) L fl _ 5 (by decide) (off62_blk L T1) _ 1024 1456 inb_S2048_S1024_1024 inb_S2048_S16_1456 _ (by decide) (by decide) _ _ x) ?_
        refine View.forall_pieces_cons (fun x => step_trow (F := F) L fl _ 5 (by decide) (off62_blk L T1) _ 1024 1440 inb_S2048_S1024_1024 inb_S2048_S16_1440 _ (by decide) (by decide) _ _ x) ?_
        refine View.forall_pieces_cons (fun x => step_trow (F := F) L fl _ 5 (by decide) (off62_blk L T1) _ 1024 1424 inb_S2048_S1024_1024 inb_S2048_S16_1424 _ (by decide) (by decide) _ _ x) ?_
        refine View.forall_pieces_cons (fun x => step_trow (F := F) L fl _ 5 (by decide) (off62_blk L T1) _ 1024 1408 inb_S2048_S1024_1024 inb_S2048_S16_1408 _ (by decide) (by decide) _ _ x) ?_
        refine View.forall_pieces_cons (fun x => step_trow (F := F) L fl _ 5 (by decide) (off62_blk L T1) _ 1024 1392 inb_S2048_S1024_1024 inb_S2048_S16_1392 _ (by decide) (by decide) _ _ x) ?_
        refine View.forall_pieces_cons (fun x => step_trow (F := F) L fl _ 5 (by decide) (off62_blk L T1) _ 1024 1376 inb_S2048_S1024_1024 inb_S2048_S16_1376 _ (by decide) (by decide) _ _ x) ?_
        refine View.forall_pieces_cons (fun x => step_trow (F := F) L fl _ 5 (by decide) (off62_blk L T1) _ 1024 1360 inb_S2048_S1024_1024 inb_S2048_S16_1360 _ (by decide) (by decide) _ _ x) ?_
        refine View.forall_pieces_cons (fun x => step_trow (F := F) L fl _ 5 (by decide) (off62_blk L T1) _ 1024 1344 inb_S2048_S1024_1024 inb_S2048_S16_1344 _ (by decide) (by decide) _ _ x) ?_
        refine View.forall_pieces_cons (fun x => step_trow (F := F) L fl _ 5 (by decide) (off62_blk L T1) _ 1024 1328 inb_S2048_S1024_1024 inb_S2048_S16_1328 _ (by decide) (by decide) _ _ x) ?_
        refine View.forall_pieces_cons (fun x => step_trow (F := F) L fl _ 5 (by decide) (off62_blk L T1) _ 1024 1312 inb_S2048_S1024_1024 inb_S2048_S16_1312 _ (by decide) (by decide) _ _ x) ?_
        refine View.forall_pieces_cons (fun x => step_trow (F := F) L fl _ 5 (by decide) (off62_blk L T1) _ 1024 1296 inb_S2048_S1024_1024 inb_S2048_S16_1296 _ (by decide) (by decide) _ _ x) ?_
        refine View.forall_pieces_cons (fun x => step_trow (F := F) L fl _ 5 (by decide) (off62_blk L T1) _ 1024 1280 inb_S2048_S1024_1024 inb_S2048_S16_1280 _ (by decide) (by decide) _ _ x) ?_
        refine View.forall_pieces_cons (fun x => step_trow (F := F) L fl _ 5 (by decide) (off62_blk L T1) _ 1024 1264 inb_S2048_S1024_1024 inb_S2048_S16_1264 _ (by decide) (by decide) _ _ x) ?_
        refine View.forall_pieces_cons (fun x => step_trow (F := F) L fl _ 5 (by decide) (off62_blk L T1) _ 1024 1248 inb_S2048_S1024_1024 inb_S2048_S16_1248 _ (by decide) (by decide) _ _ x) ?_
        refine View.forall_pieces_cons (fun x => step_trow (F := F) L fl _ 5 (by decide) (off62_blk L T1) _ 1024 1232 inb_S2048_S1024_1024 inb_S2048_S16_1232 _ (by decide) (by decide) _ _ x) ?_
        refine View.forall_pieces_cons (fun x => step_trow (F := F) L fl _ 5 (by decide) (off62_blk L T1) _ 1024 1216 inb_S2048_S1024_1024 inb_S2048_S16_1216 _ (by decide) (by decide) _ _ x) ?_
        refine View.forall_pieces_cons (fun x => step_trow (F := F) L fl _ 5 (by decide) (off62_blk L T1) _ 1024 1200 inb_S2048_S1024_1024 inb_S2048_S16_1200 _ (by decide) (by decide) _ _ x) ?_
        refine View.forall_pieces_cons (fun x => step_trow (F := F) L fl _ 5 (by decide) (off62_blk L T1) _ 1024 1184 inb_S2048_S1024_1024 inb_S2048_S16_1184 _ (by decide) (by decide) _ _ x) ?_
        refine View.forall_pieces_cons (fun x => step_trow (F := F) L fl _ 5 (by decide) (off62_blk L T1) _ 1024 1168 inb_S2048_S1024_1024 inb_S2048_S16_1168 _ (by decide) (by decide) _ _ x) ?_
        refine View.forall_pieces_cons (fun x => step_trow (F := F) L fl _ 5 (by decide) (off62_blk L T1) _ 1024 1152 inb_S2048_S1024_1024 inb_S2048_S16_1152 _ (by decide) (by decide) _ _ x) ?_
        refine View.forall_pieces_cons (fun x => step_trow (F := F) L fl _ 5 (by decide) (off62_blk L T1) _ 1024 1136 inb_S2048_S1024_1024 inb_S2048_S16_1136 _ (by decide) (by decide) _ _ x) ?_
        refine View.forall_pieces_cons (fun x => step_trow (F := F) L fl _ 5 (by decide) (off62_blk L T1) _ 1024 1120 inb_S2048_S1024_1024 inb_S2048_S16_1120 _ (by decide) (by decide) _ _ x) ?_
        refine View.forall_pieces_cons (fun x => step_trow (F := F) L fl _ 5 (by decide) (off62_blk L T1) _ 1024 1104 inb_S2048_S1024_1024 inb_S2048_S16_1104 _ (by decide) (by decide) _ _ x) ?_
        refine View.forall_pieces_cons (fun x => step_trow (F := F) L fl _ 5 (by decide) (off62_blk L T1) _ 1024 1088 inb_S2048_S1024_1024 inb_S2048_S16_1088 _ (by decide) (by decide) _ _ x) ?_
        refine View.forall_pieces_cons (fun x => step_trow (F := F) L fl _ 5 (by decide) (off62_blk L T1) _ 1024 1072 inb_S2048_S1024_1024 inb_S2048_S16_1072 _ (by decide) (by decide) _ _ x) ?_
        refine View.forall_pieces_cons (fun x => step_trow (F := F) L fl _ 5 (by decide) (off62_blk L T1) _ 1024 1056 inb_S2048_S1024_1024 inb_S2048_S16_1056 _ (by decide) (by decide) _ _ x) ?_
        refine View.forall_pieces_cons (fun x => step_trow (F := F) L fl _ 5 (by decide) (off62_blk L T1) _ 1024 1040 inb_S2048_S1024_1024 inb_S2048_S16_1040 _ (by decide) (by decide) _ _ x) ?_
        refine View.forall_pieces_cons (fun x => step_trow (F := F) L fl _ 5 (by decide) (off62_blk L T1) _ 1024 1024 inb_S2048_S1024_1024 inb_S2048_S16_1024 _ (by decide) (by decide) _ _ x) ?_
        exact View.forall_pieces_nil
      ·
        refine View.forall_pieces_cons (fun x => step_tcol (F := F) L fl _ 5 (by decide) (off62_blk L T1) _ 1024 2032 inb_S2048_S1024_1024 inb_S2048_S16_2032 _ (by decide) (by decide) _ _ x) ?_
        refine View.forall_pieces_cons (fun x => step_tcol (F := F) L fl _ 5 (by decide) (off62_blk L T1) _ 1024 2016 inb_S2048_S1024_1024 inb_S2048_S16_2016 _ (by decide) (by decide) _ _ x) ?_
        refine View.forall_pieces_cons (fun x => step_tcol (F := F) L fl _ 5 (by decide) (off62_blk L T1) _ 1024 2000 inb_S2048_S1024_1024 inb_S2048_S16_2000 _ (by decide) (by decide) _ _ x) ?_
        refine View.forall_pieces_cons (fun x => step_tcol (F := F) L fl _ 5 (by decide) (off62_blk L T1) _ 1024 1984 inb_S2048_S1024_1024 inb_S2048_S16_1984 _ (by decide) (by decide) _ _ x) ?_
        refine View.forall_pieces_cons (fun x => step_tcol (F := F) L fl _ 5 (by decide) (off62_blk L T1) _ 1024 1968 inb_S2048_S1024_1024 inb_S2048_S16_1968 _ (by decide) (by decide) _ _ x) ?_
        refine View.forall_pieces_cons (fun x => step_tcol (F := F) L fl _ 5 (by decide) (off62_blk L T1) _ 1024 1952 inb_S2048_S1024_1024 inb_S2048_S16_1952 _ (by decide) (by decide) _ _ x) ?_
        refine View.forall_pieces_cons (fun x => step_tcol (F := F) L fl _ 5 (by decide) (off62_blk L T1) _ 1024 1936 inb_S2048_S1024_1024 inb_S2048_S16_1936 _ (by decide) (by decide) _ _ x) ?_
        refine View.forall_pieces_cons (fun x => step_tcol (F := F) L fl _ 5 (by decide) (off62_blk L T1) _ 1024 1920 inb_S2048_S1024_1024 inb_S2048_S16_1920 _ (by decide) (by decide) _ _ x) ?_
        refine View.forall_pieces_cons (fun x => step_tcol (F := F) L fl _ 5 (by decide) (off62_blk L T1) _ 1024 1904 inb_S2048_S1024_1024 inb_S2048_S16_1904 _ (by decide) (by decide) _ _ x) ?_
        refine View.forall_pieces_cons (fun x => step_tcol (F := F) L fl _ 5 (by decide) (off62_blk L T1) _ 1024 1888 inb_S2048_S1024_1024 inb_S2048_S16_1888 _ (by decide) (by decide) _ _ x) ?_
        refine View.forall_pieces_cons (fun x => step_tcol (F := F) L fl _ 5 (by decide) (off62_blk L T1) _ 1024 1872 inb_S2048_S1024_1024 inb_S2048_S16_1872 _ (by decide) (by decide) _ _ x) ?_
        refine View.forall_pieces_cons (fun x => step_tcol (F := F) L fl _ 5 (by decide) (off62_blk L T1) _ 1024 1856 inb_S2048_S1024_1024 inb_S2048_S16_1856 _ (by decide) (by decide) _ _ x) ?_
        refine View.forall_pieces_cons (fun x => step_tcol (F := F) L fl _ 5 (by decide) (off62_blk L T1) _ 1024 1840 inb_S2048_S1024_1024 inb_S2048_S16_1840 _ (by decide) (by decide) _ _ x) ?_
        refine View.forall_pieces_cons (fun x => step_tcol (F := F) L fl _ 5 (by decide) (off62_blk L T1) _ 1024 1824 inb_S2048_S1024_1024 inb_S2048_S16_1824 _ (by decide) (by decide) _ _ x) ?_
        refine View.forall_pieces_cons (fun x => step_tcol (F := F) L fl _ 5 (by decide) (off62_blk L T1) _ 1024 1808 inb_S2048_S1024_1024 inb_S2048_S16_1808 _ (by decide) (by decide) _ _ x) ?_
        refine View.forall_pieces_cons (fun x => step_tcol (F := F) L fl _ 5 (by decide) (off62_blk L T1) _ 1024 1792 inb_S2048_S1024_1024 inb_S2048_S16_1792 _ (by decide) (by decide) _ _ x) ?_
        refine View.forall_pieces_cons (fun x => step_tcol (F := F) L fl _ 5 (by decide) (off62_blk L T1) _ 1024 1776 inb_S2048_S1024_1024 inb_S2048_S16_1776 _ (by decide) (by decide) _ _ x) ?_
        refine View.forall_pieces_cons (fun x => step_tcol (F := F) L fl _ 5 (by decide) (off62_blk L T1) _ 1024 1760 inb_S2048_S1024_1024 inb_S2048_S16_1760 _ (by decide) (by decide) _ _ x) ?_
        refine View.forall_pieces_cons (fun x => step_tcol (F := F) L fl _ 5 (by decide) (off62_blk L T1) _ 1024 1744 inb_S2048_S1024_1024 inb_S2048_S16_1744 _ (by decide) (by decide) _ _ x) ?_
        refine View.forall_pieces_cons (fun x => step_tcol (F := F) L fl _ 5 (by decide) (off62_blk L T1) _ 1024 1728 inb_S2048_S1024_1024 inb_S2048_S16_1728 _ (by decide) (by decide) _ _ x) ?_
        refine View.forall_pieces_cons (fun x => step_tcol (F := F) L fl _ 5 (by decide) (off62_blk L T1) _ 1024 1712 inb_S2048_S1024_1024 inb_S2048_S16_1712 _ (by decide) (by decide) _ _ x) ?_
        refine View.forall_pieces_cons (fun x => step_tcol (F := F) L fl _ 5 (by decide) (off62_blk L T1) _ 1024 1696 inb_S2048_S1024_1024 inb_S2048_S16_1696 _ (by decide) (by decide) _ _ x) ?_
        refine View.forall_pieces_cons (fun x => step_tcol (F := F) L fl _ 5 (by decide) (off62_blk L T1) _ 1024 1680 inb_S2048_S1024_1024 inb_S2048_S16_1680 _ (by decide) (by decide) _ _ x) ?_
        refine View.forall_pieces_cons (fun x => step_tcol (F := F) L fl _ 5 (by decide) (off62_blk L T1) _ 1024 1664 inb_S2048_S1024_1024 inb_S2048_S16_1664 _ (by decide) (by decide) _ _ x) ?_
        refine View.forall_pieces_cons (fun x => step_tcol (F := F) L fl _ 5 (by decide) (off62_blk L T1) _ 1024 1648 inb_S2048_S1024_1024 inb_S2048_S16_1648 _ (by decide) (by decide) _ _ x) ?_
        refine View.forall_pieces_cons (fun x => step_tcol (F := F) L fl _ 5 (by decide) (off62_blk L T1) _ 1024 1632 inb_S2048_S1024_1024 inb_S2048_S16_1632 _ (by decide) (by decide) _ _ x) ?_
        refine View.forall_pieces_cons (fun x => step_tcol (F := F) L fl _ 5 (by decide) (off62_blk L T1) _ 1024 1616 inb_S2048_S1024_1024 inb_S2048_S16_1616 _ (by decide) (by decide) _ _ x) ?_
        refine View.forall_pieces_cons (fun x => step_tcol (F := F) L fl _ 5 (by decide) (off62_blk L T1) _ 1024 1600 inb_S2048_S1024_1024 inb_S2048_S16_1600 _ (by decide) (by decide) _ _ x) ?_
        refine View.forall_pieces_cons (fun x => step_tcol (F := F) L fl _ 5 (by decide) (off62_blk L T1) _ 1024 1584 inb_S2048_S1024_1024 inb_S2048_S16_1584 _ (by decide) (by decide) _ _ x) ?_
        refine View.forall_pieces_cons (fun x => step_tcol (F := F) L fl _ 5 (by decide) (off62_blk L T1) _ 1024 1568 inb_S2048_S1024_1024 inb_S2048_S16_1568 _ (by decide) (by decide) _ _ x) ?_
        refine View.forall_pieces_cons (fun x => step_tcol (F := F) L fl _ 5 (by decide) (off62_blk L T1) _ 1024 1552 inb_S2048_S1024_1024 inb_S2048_S16_1552 _ (by decide) (by decide) _ _ x) ?_
        refine View.forall_pieces_cons (fun x => step_tcol (F := F) L fl _ 5 (by decide) (off62_blk L T1) _ 1024 1536 inb_S2048_S1024_1024 inb_S2048_S16_1536 _ (by decide) (by decide) _ _ x) ?_
        refine View.forall_pieces_cons (fun x => step_tcol (F := F) L fl _ 5 (by decide) (off62_blk L T1) _ 1024 1520 inb_S2048_S1024_1024 inb_S2048_S16_1520 _ (by decide) (by decide) _ _ x) ?_
        refine View.forall_pieces_cons (fun x => step_tcol (F := F) L fl _ 5 (by decide) (off62_blk L T1) _ 1024 1504 inb_S2048_S1024_1024 inb_S2048_S16_1504 _ (by decide) (by decide) _ _ x) ?_
        refine View.forall_pieces_cons (fun x => step_tcol (F := F) L fl _ 5 (by decide) (off62_blk L T1) _ 1024 1488 inb_S2048_S1024_1024 inb_S2048_S16_1488 _ (by decide) (by decide) _ _ x) ?_
        refine View.forall_pieces_cons (fun x => step_tcol (F := F) L fl _ 5 (by decide) (off62_blk L T1) _ 1024 1472 inb_S2048_S1024_1024 inb_S2048_S16_1472 _ (by decide) (by decide) _ _ x) ?_
        refine View.forall_pieces_cons (fun x => step_tcol (F := F) L fl _ 5 (by decide) (off62_blk L T1) _ 1024 1456 inb_S2048_S1024_1024 inb_S2048_S16_1456 _ (by decide) (by decide) _ _ x) ?_
        refine View.forall_pieces_cons (fun x => step_tcol (F := F) L fl _ 5 (by decide) (off62_blk L T1) _ 1024 1440 inb_S2048_S1024_1024 inb_S2048_S16_1440 _ (by decide) (by decide) _ _ x) ?_
        refine View.forall_pieces_cons (fun x => step_tcol (F := F) L fl _ 5 (by decide) (off62_blk L T1) _ 1024 1424 inb_S2048_S1024_1024 inb_S2048_S16_1424 _ (by decide) (by decide) _ _ x) ?_
        refine View.forall_pieces_cons (fun x => step_tcol (F := F) L fl _ 5 (by decide) (off62_blk L T1) _ 1024 1408 inb_S2048_S1024_1024 inb_S2048_S16_1408 _ (by decide) (by decide) _ _ x) ?_
        refine View.forall_pieces_cons (fun x => step_tcol (F := F) L fl _ 5 (by decide) (off62_blk L T1) _ 1024 1392 inb_S2048_S1024_1024 inb_S2048_S16_1392 _ (by decide) (by decide) _ _ x) ?_
        refine View.forall_pieces_cons (fun x => step_tcol (F := F) L fl _ 5 (by decide) (off62_blk L T1) _ 1024 1376 inb_S2048_S1024_1024 inb_S2048_S16_1376 _ (by decide) (by decide) _ _ x) ?_
        refine View.forall_pieces_cons (fun x => step_tcol (F := F) L fl _ 5 (by decide) (off62_blk L T1) _ 1024 1360 inb_S2048_S1024_1024 inb_S2048_S16_1360 _ (by decide) (by decide) _ _ x) ?_
        refine View.forall_pieces_cons (fun x => step_tcol (F := F) L fl _ 5 (by decide) (off62_blk L T1) _ 1024 1344 inb_S2048_S1024_1024 inb_S2048_S16_1344 _ (by decide) (by decide) _ _ x) ?_
        refine View.forall_pieces_cons (fun x => step_tcol (F := F) L fl _ 5 (by decide) (off62_blk L T1) _ 1024 1328 inb_S2048_S1024_1024 inb_S2048_S16_1328 _ (by decide) (by decide) _ _ x) ?_
        refine View.forall_pieces_cons (fun x => step_tcol (F := F) L fl _ 5 (by decide) (off62_blk L T1) _ 1024 1312 inb_S2048_S1024_1024 inb_S2048_S16_1312 _ (by decide) (by decide) _ _ x) ?_
        refine View.forall_pieces_cons (fun x => step_tcol (F := F) L fl _ 5 (by decide) (off62_blk L T1) _ 1024 1296 inb_S2048_S1024_1024 inb_S2048_S16_1296 _ (by decide) (by decide) _ _ x) ?_
        refine View.forall_pieces_cons (fun x => step_tcol (F := F) L fl _ 5 (by decide) (off62_blk L T1) _ 1024 1280 inb_S2048_S1024_1024 inb_S2048_S16_1280 _ (by decide) (by decide) _ _ x) ?_
        refine View.forall_pieces_cons (fun x => step_tcol (F := F) L fl _ 5 (by decide) (off62_blk L T1) _ 1024 1264 inb_S2048_S1024_1024 inb_S2048_S16_1264 _ (by decide) (by decide) _ _ x) ?_
        refine View.forall_pieces_cons (fun x => step_tcol (F := F) L fl _ 5 (by decide) (off62_blk L T1) _ 1024 1248 inb_S2048_S1024_1024 inb_S2048_S16_1248 _ (by decide) (by decide) _ _ x) ?_
        refine View.forall_pieces_cons (fun x => step_tcol (F := F) L fl _ 5 (by decide) (off62_blk L T1) _ 1024 1232 inb_S2048_S1024_1024 inb_S2048_S16_1232 _ (by decide) (by decide) _ _ x) ?_
        refine View.forall_pieces_cons (fun x => step_tcol (F := F) L fl _ 5 (by decide) (off62_blk L T1) _ 1024 1216 inb_S2048_S1024_1024 inb_S2048_S16_1216 _ (by decide) (by decide) _ _ x) ?_
        refine View.forall_pieces_cons (fun x => step_tcol (F := F) L fl _ 5 (by decide) (off62_blk L T1) _ 1024 1200 inb_S2048_S1024_1024 inb_S2048_S16_1200 _ (by decide) (by decide) _ _ x) ?_
        refine View.forall_pieces_cons (fun x => step_tcol (F := F) L fl _ 5 (by decide) (off62_blk L T1) _ 1024 1184 inb_S2048_S1024_1024 inb_S2048_S16_1184 _ (by decide) (by decide) _ _ x) ?_
        refine View.forall_pieces_cons (fun x => step_tcol (F := F) L fl _ 5 (by decide) (off62_blk L T1) _ 1024 1168 inb_S2048_S1024_1024 inb_S2048_S16_1168 _ (by decide) (by decide) _ _ x) ?_
        refine View.forall_pieces_cons (fun x => step_tcol (F := F) L fl _ 5 (by decide) (off62_blk L T1) _ 1024 1152 inb_S2048_S1024_1024 inb_S2048_S16_1152 _ (by decide) (by decide) _ _ x) ?_
        refine View.forall_pieces_cons (fun x => step_tcol (F := F) L fl _ 5 (by decide) (off62_blk L T1) _ 1024 1136 inb_S2048_S1024_1024 inb_S2048_S16_1136 _ (by decide) (by decide) _ _ x) ?_
        refine View.forall_pieces_cons (fun x => step_tcol (F := F) L fl _ 5 (by decide) (off62_blk L T1) _ 1024 1120 inb_S2048_S1024_1024 inb_S2048_S16_1120 _ (by decide) (by decide) _ _ x) ?_
        refine View.forall_pieces_cons (fun x => step_tcol (F := F) L fl _ 5 (by decide) (off62_blk L T1) _ 1024 1104 inb_S2048_S1024_1024 inb_S2048_S16_1104 _ (by decide) (by decide) _ _ x) ?_
        refine View.forall_pieces_cons (fun x => step_tcol (F := F) L fl _ 5 (by decide) (off62_blk L T1) _ 1024 1088 inb_S2048_S1024_1024 inb_S2048_S16_1088 _ (by decide) (by decide) _ _ x) ?_
        refine View.forall_pieces_cons (fun x => step_tcol (F := F) L fl _ 5 (by decide) (off62_blk L T1) _ 1024 1072 inb_S2048_S1024_1024 inb_S2048_S16_1072 _ (by decide) (by decide) _ _ x) ?_
        refine View.forall_pieces_cons (fun x => step_tcol (F := F) L fl _ 5 (by decide) (off62_blk L T1) _ 1024 1056 inb_S2048_S1024_1024 inb_S2048_S16_1056 _ (by decide) (by decide) _ _ x) ?_
        refine View.forall_pieces_cons (fun x => step_tcol (F := F) L fl _ 5 (by decide) (off62_blk L T1) _ 1024 1040 inb_S2048_S1024_1024 inb_S2048_S16_1040 _ (by decide) (by decide) _ _ x) ?_
        refine View.forall_pieces_cons (fun x => step_tcol (F := F) L fl _ 5 (by decide) (off62_blk L T1) _ 1024 1024 inb_S2048_S1024_1024 inb_S2048_S16_1024 _ (by decide) (by decide) _ _ x) ?_
        exact View.forall_pieces_nil
  iintro %_ HI
  unfold inv0
  icases HI with ⟨-, %r4, %g14, %g24, %wb4, %o4, %ho4, ⟨%hT4, %hR4, %ho4_eq, %hV4⟩, Hg0, H1, Ht, H3, H2, H4r, Hg1, %W4, %hW4, HO⟩
  obtain rfl : o4 = ![1024] := ho4_eq.trans e8
  have hin4 := hin_of d L g14 hT4
  sl_exec_parts (disch := decide)
  -- odd block 5
  ihave H4j := (wb_join_b (F := F) d L _ _) $$ [H4r_2 H4r]
  · isplitl [H4r_2] <;> iassumption
  sl_for (inv1 d L fl qt tab O (insert (SemLoc.dma cc1_scratch7.sem, (default : HIx 1)) (insert (SemLoc.dma cc1_scratch10.sem, (default : HIx 1)) W4)) 5) $$ [Hmw Hg0 Ht H3 H1 H2 H4j Hg1 HO]
  case region => intro k _; exact pair1_region d L fl qt tab O _ T2 _ k
  · rw [inv1_flight (F := F) d L fl qt tab O _ 5 _ (Or.inl (by decide))]
    unfold invF
    isplitl [Hmw]; · iexact Hmw
    iexists _; iexists _; iexists _; iexists _; iexists ![1024]; iexists ho4
    isplitr; rotate_left
    · isplitl [Hg0]; rotate_left
      · isplitl [H1]; · iexact H1
        isplitl [Ht]; · iexact Ht
        isplitl [H3]; · iexact H3
        isplitl [H2]; · iexact H2
        isplitl [H4j]; · iexact H4j
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A5: the list's fifty words are not touched by the later stores
          intro i hi
          have hi0 := (mem_listM _ _ i).mp hi
          simp only [Matrix.cons_val_zero] at hi0
          exact (keep_word d L _ _ 0 (by rfl) i (by omega)).symm
    · ipureintro
      -- HOLE B5: the values at the loop's entry
      obtain ⟨hTh, hRh, hRowsh⟩ := even_to_odd d L fl tab 4 _ _ _ _ hV4
      have_entry odd_entry
      refine key hfl hTh hRh hRowsh ?_ (by rfl) ?_ (by rfl) (by unfold lo1; rfl)
      ·
        refine View.forall_pieces_cons (fun x => step_trow (F := F) L fl _ 6 (by decide) (off5_blk L T2) _ 0 1008 inb_S2048_S1024_0 inb_S2048_S16_1008 _ (by decide) (by decide) _ _ x) ?_
        refine View.forall_pieces_cons (fun x => step_trow (F := F) L fl _ 6 (by decide) (off5_blk L T2) _ 0 992 inb_S2048_S1024_0 inb_S2048_S16_992 _ (by decide) (by decide) _ _ x) ?_
        refine View.forall_pieces_cons (fun x => step_trow (F := F) L fl _ 6 (by decide) (off5_blk L T2) _ 0 976 inb_S2048_S1024_0 inb_S2048_S16_976 _ (by decide) (by decide) _ _ x) ?_
        refine View.forall_pieces_cons (fun x => step_trow (F := F) L fl _ 6 (by decide) (off5_blk L T2) _ 0 960 inb_S2048_S1024_0 inb_S2048_S16_960 _ (by decide) (by decide) _ _ x) ?_
        refine View.forall_pieces_cons (fun x => step_trow (F := F) L fl _ 6 (by decide) (off5_blk L T2) _ 0 944 inb_S2048_S1024_0 inb_S2048_S16_944 _ (by decide) (by decide) _ _ x) ?_
        refine View.forall_pieces_cons (fun x => step_trow (F := F) L fl _ 6 (by decide) (off5_blk L T2) _ 0 928 inb_S2048_S1024_0 inb_S2048_S16_928 _ (by decide) (by decide) _ _ x) ?_
        refine View.forall_pieces_cons (fun x => step_trow (F := F) L fl _ 6 (by decide) (off5_blk L T2) _ 0 912 inb_S2048_S1024_0 inb_S2048_S16_912 _ (by decide) (by decide) _ _ x) ?_
        refine View.forall_pieces_cons (fun x => step_trow (F := F) L fl _ 6 (by decide) (off5_blk L T2) _ 0 896 inb_S2048_S1024_0 inb_S2048_S16_896 _ (by decide) (by decide) _ _ x) ?_
        refine View.forall_pieces_cons (fun x => step_trow (F := F) L fl _ 6 (by decide) (off5_blk L T2) _ 0 880 inb_S2048_S1024_0 inb_S2048_S16_880 _ (by decide) (by decide) _ _ x) ?_
        refine View.forall_pieces_cons (fun x => step_trow (F := F) L fl _ 6 (by decide) (off5_blk L T2) _ 0 864 inb_S2048_S1024_0 inb_S2048_S16_864 _ (by decide) (by decide) _ _ x) ?_
        refine View.forall_pieces_cons (fun x => step_trow (F := F) L fl _ 6 (by decide) (off5_blk L T2) _ 0 848 inb_S2048_S1024_0 inb_S2048_S16_848 _ (by decide) (by decide) _ _ x) ?_
        refine View.forall_pieces_cons (fun x => step_trow (F := F) L fl _ 6 (by decide) (off5_blk L T2) _ 0 832 inb_S2048_S1024_0 inb_S2048_S16_832 _ (by decide) (by decide) _ _ x) ?_
        refine View.forall_pieces_cons (fun x => step_trow (F := F) L fl _ 6 (by decide) (off5_blk L T2) _ 0 816 inb_S2048_S1024_0 inb_S2048_S16_816 _ (by decide) (by decide) _ _ x) ?_
        refine View.forall_pieces_cons (fun x => step_trow (F := F) L fl _ 6 (by decide) (off5_blk L T2) _ 0 800 inb_S2048_S1024_0 inb_S2048_S16_800 _ (by decide) (by decide) _ _ x) ?_
        refine View.forall_pieces_cons (fun x => step_trow (F := F) L fl _ 6 (by decide) (off5_blk L T2) _ 0 784 inb_S2048_S1024_0 inb_S2048_S16_784 _ (by decide) (by decide) _ _ x) ?_
        refine View.forall_pieces_cons (fun x => step_trow (F := F) L fl _ 6 (by decide) (off5_blk L T2) _ 0 768 inb_S2048_S1024_0 inb_S2048_S16_768 _ (by decide) (by decide) _ _ x) ?_
        refine View.forall_pieces_cons (fun x => step_trow (F := F) L fl _ 6 (by decide) (off5_blk L T2) _ 0 752 inb_S2048_S1024_0 inb_S2048_S16_752 _ (by decide) (by decide) _ _ x) ?_
        refine View.forall_pieces_cons (fun x => step_trow (F := F) L fl _ 6 (by decide) (off5_blk L T2) _ 0 736 inb_S2048_S1024_0 inb_S2048_S16_736 _ (by decide) (by decide) _ _ x) ?_
        refine View.forall_pieces_cons (fun x => step_trow (F := F) L fl _ 6 (by decide) (off5_blk L T2) _ 0 720 inb_S2048_S1024_0 inb_S2048_S16_720 _ (by decide) (by decide) _ _ x) ?_
        refine View.forall_pieces_cons (fun x => step_trow (F := F) L fl _ 6 (by decide) (off5_blk L T2) _ 0 704 inb_S2048_S1024_0 inb_S2048_S16_704 _ (by decide) (by decide) _ _ x) ?_
        refine View.forall_pieces_cons (fun x => step_trow (F := F) L fl _ 6 (by decide) (off5_blk L T2) _ 0 688 inb_S2048_S1024_0 inb_S2048_S16_688 _ (by decide) (by decide) _ _ x) ?_
        refine View.forall_pieces_cons (fun x => step_trow (F := F) L fl _ 6 (by decide) (off5_blk L T2) _ 0 672 inb_S2048_S1024_0 inb_S2048_S16_672 _ (by decide) (by decide) _ _ x) ?_
        refine View.forall_pieces_cons (fun x => step_trow (F := F) L fl _ 6 (by decide) (off5_blk L T2) _ 0 656 inb_S2048_S1024_0 inb_S2048_S16_656 _ (by decide) (by decide) _ _ x) ?_
        refine View.forall_pieces_cons (fun x => step_trow (F := F) L fl _ 6 (by decide) (off5_blk L T2) _ 0 640 inb_S2048_S1024_0 inb_S2048_S16_640 _ (by decide) (by decide) _ _ x) ?_
        refine View.forall_pieces_cons (fun x => step_trow (F := F) L fl _ 6 (by decide) (off5_blk L T2) _ 0 624 inb_S2048_S1024_0 inb_S2048_S16_624 _ (by decide) (by decide) _ _ x) ?_
        refine View.forall_pieces_cons (fun x => step_trow (F := F) L fl _ 6 (by decide) (off5_blk L T2) _ 0 608 inb_S2048_S1024_0 inb_S2048_S16_608 _ (by decide) (by decide) _ _ x) ?_
        refine View.forall_pieces_cons (fun x => step_trow (F := F) L fl _ 6 (by decide) (off5_blk L T2) _ 0 592 inb_S2048_S1024_0 inb_S2048_S16_592 _ (by decide) (by decide) _ _ x) ?_
        refine View.forall_pieces_cons (fun x => step_trow (F := F) L fl _ 6 (by decide) (off5_blk L T2) _ 0 576 inb_S2048_S1024_0 inb_S2048_S16_576 _ (by decide) (by decide) _ _ x) ?_
        refine View.forall_pieces_cons (fun x => step_trow (F := F) L fl _ 6 (by decide) (off5_blk L T2) _ 0 560 inb_S2048_S1024_0 inb_S2048_S16_560 _ (by decide) (by decide) _ _ x) ?_
        refine View.forall_pieces_cons (fun x => step_trow (F := F) L fl _ 6 (by decide) (off5_blk L T2) _ 0 544 inb_S2048_S1024_0 inb_S2048_S16_544 _ (by decide) (by decide) _ _ x) ?_
        refine View.forall_pieces_cons (fun x => step_trow (F := F) L fl _ 6 (by decide) (off5_blk L T2) _ 0 528 inb_S2048_S1024_0 inb_S2048_S16_528 _ (by decide) (by decide) _ _ x) ?_
        refine View.forall_pieces_cons (fun x => step_trow (F := F) L fl _ 6 (by decide) (off5_blk L T2) _ 0 512 inb_S2048_S1024_0 inb_S2048_S16_512 _ (by decide) (by decide) _ _ x) ?_
        refine View.forall_pieces_cons (fun x => step_trow (F := F) L fl _ 6 (by decide) (off5_blk L T2) _ 0 496 inb_S2048_S1024_0 inb_S2048_S16_496 _ (by decide) (by decide) _ _ x) ?_
        refine View.forall_pieces_cons (fun x => step_trow (F := F) L fl _ 6 (by decide) (off5_blk L T2) _ 0 480 inb_S2048_S1024_0 inb_S2048_S16_480 _ (by decide) (by decide) _ _ x) ?_
        refine View.forall_pieces_cons (fun x => step_trow (F := F) L fl _ 6 (by decide) (off5_blk L T2) _ 0 464 inb_S2048_S1024_0 inb_S2048_S16_464 _ (by decide) (by decide) _ _ x) ?_
        refine View.forall_pieces_cons (fun x => step_trow (F := F) L fl _ 6 (by decide) (off5_blk L T2) _ 0 448 inb_S2048_S1024_0 inb_S2048_S16_448 _ (by decide) (by decide) _ _ x) ?_
        refine View.forall_pieces_cons (fun x => step_trow (F := F) L fl _ 6 (by decide) (off5_blk L T2) _ 0 432 inb_S2048_S1024_0 inb_S2048_S16_432 _ (by decide) (by decide) _ _ x) ?_
        refine View.forall_pieces_cons (fun x => step_trow (F := F) L fl _ 6 (by decide) (off5_blk L T2) _ 0 416 inb_S2048_S1024_0 inb_S2048_S16_416 _ (by decide) (by decide) _ _ x) ?_
        refine View.forall_pieces_cons (fun x => step_trow (F := F) L fl _ 6 (by decide) (off5_blk L T2) _ 0 400 inb_S2048_S1024_0 inb_S2048_S16_400 _ (by decide) (by decide) _ _ x) ?_
        refine View.forall_pieces_cons (fun x => step_trow (F := F) L fl _ 6 (by decide) (off5_blk L T2) _ 0 384 inb_S2048_S1024_0 inb_S2048_S16_384 _ (by decide) (by decide) _ _ x) ?_
        refine View.forall_pieces_cons (fun x => step_trow (F := F) L fl _ 6 (by decide) (off5_blk L T2) _ 0 368 inb_S2048_S1024_0 inb_S2048_S16_368 _ (by decide) (by decide) _ _ x) ?_
        refine View.forall_pieces_cons (fun x => step_trow (F := F) L fl _ 6 (by decide) (off5_blk L T2) _ 0 352 inb_S2048_S1024_0 inb_S2048_S16_352 _ (by decide) (by decide) _ _ x) ?_
        refine View.forall_pieces_cons (fun x => step_trow (F := F) L fl _ 6 (by decide) (off5_blk L T2) _ 0 336 inb_S2048_S1024_0 inb_S2048_S16_336 _ (by decide) (by decide) _ _ x) ?_
        refine View.forall_pieces_cons (fun x => step_trow (F := F) L fl _ 6 (by decide) (off5_blk L T2) _ 0 320 inb_S2048_S1024_0 inb_S2048_S16_320 _ (by decide) (by decide) _ _ x) ?_
        refine View.forall_pieces_cons (fun x => step_trow (F := F) L fl _ 6 (by decide) (off5_blk L T2) _ 0 304 inb_S2048_S1024_0 inb_S2048_S16_304 _ (by decide) (by decide) _ _ x) ?_
        refine View.forall_pieces_cons (fun x => step_trow (F := F) L fl _ 6 (by decide) (off5_blk L T2) _ 0 288 inb_S2048_S1024_0 inb_S2048_S16_288 _ (by decide) (by decide) _ _ x) ?_
        refine View.forall_pieces_cons (fun x => step_trow (F := F) L fl _ 6 (by decide) (off5_blk L T2) _ 0 272 inb_S2048_S1024_0 inb_S2048_S16_272 _ (by decide) (by decide) _ _ x) ?_
        refine View.forall_pieces_cons (fun x => step_trow (F := F) L fl _ 6 (by decide) (off5_blk L T2) _ 0 256 inb_S2048_S1024_0 inb_S2048_S16_256 _ (by decide) (by decide) _ _ x) ?_
        refine View.forall_pieces_cons (fun x => step_trow (F := F) L fl _ 6 (by decide) (off5_blk L T2) _ 0 240 inb_S2048_S1024_0 inb_S2048_S16_240 _ (by decide) (by decide) _ _ x) ?_
        refine View.forall_pieces_cons (fun x => step_trow (F := F) L fl _ 6 (by decide) (off5_blk L T2) _ 0 224 inb_S2048_S1024_0 inb_S2048_S16_224 _ (by decide) (by decide) _ _ x) ?_
        refine View.forall_pieces_cons (fun x => step_trow (F := F) L fl _ 6 (by decide) (off5_blk L T2) _ 0 208 inb_S2048_S1024_0 inb_S2048_S16_208 _ (by decide) (by decide) _ _ x) ?_
        refine View.forall_pieces_cons (fun x => step_trow (F := F) L fl _ 6 (by decide) (off5_blk L T2) _ 0 192 inb_S2048_S1024_0 inb_S2048_S16_192 _ (by decide) (by decide) _ _ x) ?_
        refine View.forall_pieces_cons (fun x => step_trow (F := F) L fl _ 6 (by decide) (off5_blk L T2) _ 0 176 inb_S2048_S1024_0 inb_S2048_S16_176 _ (by decide) (by decide) _ _ x) ?_
        refine View.forall_pieces_cons (fun x => step_trow (F := F) L fl _ 6 (by decide) (off5_blk L T2) _ 0 160 inb_S2048_S1024_0 inb_S2048_S16_160 _ (by decide) (by decide) _ _ x) ?_
        refine View.forall_pieces_cons (fun x => step_trow (F := F) L fl _ 6 (by decide) (off5_blk L T2) _ 0 144 inb_S2048_S1024_0 inb_S2048_S16_144 _ (by decide) (by decide) _ _ x) ?_
        refine View.forall_pieces_cons (fun x => step_trow (F := F) L fl _ 6 (by decide) (off5_blk L T2) _ 0 128 inb_S2048_S1024_0 inb_S2048_S16_128 _ (by decide) (by decide) _ _ x) ?_
        refine View.forall_pieces_cons (fun x => step_trow (F := F) L fl _ 6 (by decide) (off5_blk L T2) _ 0 112 inb_S2048_S1024_0 inb_S2048_S16_112 _ (by decide) (by decide) _ _ x) ?_
        refine View.forall_pieces_cons (fun x => step_trow (F := F) L fl _ 6 (by decide) (off5_blk L T2) _ 0 96 inb_S2048_S1024_0 inb_S2048_S16_96 _ (by decide) (by decide) _ _ x) ?_
        refine View.forall_pieces_cons (fun x => step_trow (F := F) L fl _ 6 (by decide) (off5_blk L T2) _ 0 80 inb_S2048_S1024_0 inb_S2048_S16_80 _ (by decide) (by decide) _ _ x) ?_
        refine View.forall_pieces_cons (fun x => step_trow (F := F) L fl _ 6 (by decide) (off5_blk L T2) _ 0 64 inb_S2048_S1024_0 inb_S2048_S16_64 _ (by decide) (by decide) _ _ x) ?_
        refine View.forall_pieces_cons (fun x => step_trow (F := F) L fl _ 6 (by decide) (off5_blk L T2) _ 0 48 inb_S2048_S1024_0 inb_S2048_S16_48 _ (by decide) (by decide) _ _ x) ?_
        refine View.forall_pieces_cons (fun x => step_trow (F := F) L fl _ 6 (by decide) (off5_blk L T2) _ 0 32 inb_S2048_S1024_0 inb_S2048_S16_32 _ (by decide) (by decide) _ _ x) ?_
        refine View.forall_pieces_cons (fun x => step_trow (F := F) L fl _ 6 (by decide) (off5_blk L T2) _ 0 16 inb_S2048_S1024_0 inb_S2048_S16_16 _ (by decide) (by decide) _ _ x) ?_
        refine View.forall_pieces_cons (fun x => step_trow (F := F) L fl _ 6 (by decide) (off5_blk L T2) _ 0 0 inb_S2048_S1024_0 inb_S2048_S16_0 _ (by decide) (by decide) _ _ x) ?_
        exact View.forall_pieces_nil
      ·
        refine View.forall_pieces_cons (fun x => step_tcol (F := F) L fl _ 6 (by decide) (off5_blk L T2) _ 0 1008 inb_S2048_S1024_0 inb_S2048_S16_1008 _ (by decide) (by decide) _ _ x) ?_
        refine View.forall_pieces_cons (fun x => step_tcol (F := F) L fl _ 6 (by decide) (off5_blk L T2) _ 0 992 inb_S2048_S1024_0 inb_S2048_S16_992 _ (by decide) (by decide) _ _ x) ?_
        refine View.forall_pieces_cons (fun x => step_tcol (F := F) L fl _ 6 (by decide) (off5_blk L T2) _ 0 976 inb_S2048_S1024_0 inb_S2048_S16_976 _ (by decide) (by decide) _ _ x) ?_
        refine View.forall_pieces_cons (fun x => step_tcol (F := F) L fl _ 6 (by decide) (off5_blk L T2) _ 0 960 inb_S2048_S1024_0 inb_S2048_S16_960 _ (by decide) (by decide) _ _ x) ?_
        refine View.forall_pieces_cons (fun x => step_tcol (F := F) L fl _ 6 (by decide) (off5_blk L T2) _ 0 944 inb_S2048_S1024_0 inb_S2048_S16_944 _ (by decide) (by decide) _ _ x) ?_
        refine View.forall_pieces_cons (fun x => step_tcol (F := F) L fl _ 6 (by decide) (off5_blk L T2) _ 0 928 inb_S2048_S1024_0 inb_S2048_S16_928 _ (by decide) (by decide) _ _ x) ?_
        refine View.forall_pieces_cons (fun x => step_tcol (F := F) L fl _ 6 (by decide) (off5_blk L T2) _ 0 912 inb_S2048_S1024_0 inb_S2048_S16_912 _ (by decide) (by decide) _ _ x) ?_
        refine View.forall_pieces_cons (fun x => step_tcol (F := F) L fl _ 6 (by decide) (off5_blk L T2) _ 0 896 inb_S2048_S1024_0 inb_S2048_S16_896 _ (by decide) (by decide) _ _ x) ?_
        refine View.forall_pieces_cons (fun x => step_tcol (F := F) L fl _ 6 (by decide) (off5_blk L T2) _ 0 880 inb_S2048_S1024_0 inb_S2048_S16_880 _ (by decide) (by decide) _ _ x) ?_
        refine View.forall_pieces_cons (fun x => step_tcol (F := F) L fl _ 6 (by decide) (off5_blk L T2) _ 0 864 inb_S2048_S1024_0 inb_S2048_S16_864 _ (by decide) (by decide) _ _ x) ?_
        refine View.forall_pieces_cons (fun x => step_tcol (F := F) L fl _ 6 (by decide) (off5_blk L T2) _ 0 848 inb_S2048_S1024_0 inb_S2048_S16_848 _ (by decide) (by decide) _ _ x) ?_
        refine View.forall_pieces_cons (fun x => step_tcol (F := F) L fl _ 6 (by decide) (off5_blk L T2) _ 0 832 inb_S2048_S1024_0 inb_S2048_S16_832 _ (by decide) (by decide) _ _ x) ?_
        refine View.forall_pieces_cons (fun x => step_tcol (F := F) L fl _ 6 (by decide) (off5_blk L T2) _ 0 816 inb_S2048_S1024_0 inb_S2048_S16_816 _ (by decide) (by decide) _ _ x) ?_
        refine View.forall_pieces_cons (fun x => step_tcol (F := F) L fl _ 6 (by decide) (off5_blk L T2) _ 0 800 inb_S2048_S1024_0 inb_S2048_S16_800 _ (by decide) (by decide) _ _ x) ?_
        refine View.forall_pieces_cons (fun x => step_tcol (F := F) L fl _ 6 (by decide) (off5_blk L T2) _ 0 784 inb_S2048_S1024_0 inb_S2048_S16_784 _ (by decide) (by decide) _ _ x) ?_
        refine View.forall_pieces_cons (fun x => step_tcol (F := F) L fl _ 6 (by decide) (off5_blk L T2) _ 0 768 inb_S2048_S1024_0 inb_S2048_S16_768 _ (by decide) (by decide) _ _ x) ?_
        refine View.forall_pieces_cons (fun x => step_tcol (F := F) L fl _ 6 (by decide) (off5_blk L T2) _ 0 752 inb_S2048_S1024_0 inb_S2048_S16_752 _ (by decide) (by decide) _ _ x) ?_
        refine View.forall_pieces_cons (fun x => step_tcol (F := F) L fl _ 6 (by decide) (off5_blk L T2) _ 0 736 inb_S2048_S1024_0 inb_S2048_S16_736 _ (by decide) (by decide) _ _ x) ?_
        refine View.forall_pieces_cons (fun x => step_tcol (F := F) L fl _ 6 (by decide) (off5_blk L T2) _ 0 720 inb_S2048_S1024_0 inb_S2048_S16_720 _ (by decide) (by decide) _ _ x) ?_
        refine View.forall_pieces_cons (fun x => step_tcol (F := F) L fl _ 6 (by decide) (off5_blk L T2) _ 0 704 inb_S2048_S1024_0 inb_S2048_S16_704 _ (by decide) (by decide) _ _ x) ?_
        refine View.forall_pieces_cons (fun x => step_tcol (F := F) L fl _ 6 (by decide) (off5_blk L T2) _ 0 688 inb_S2048_S1024_0 inb_S2048_S16_688 _ (by decide) (by decide) _ _ x) ?_
        refine View.forall_pieces_cons (fun x => step_tcol (F := F) L fl _ 6 (by decide) (off5_blk L T2) _ 0 672 inb_S2048_S1024_0 inb_S2048_S16_672 _ (by decide) (by decide) _ _ x) ?_
        refine View.forall_pieces_cons (fun x => step_tcol (F := F) L fl _ 6 (by decide) (off5_blk L T2) _ 0 656 inb_S2048_S1024_0 inb_S2048_S16_656 _ (by decide) (by decide) _ _ x) ?_
        refine View.forall_pieces_cons (fun x => step_tcol (F := F) L fl _ 6 (by decide) (off5_blk L T2) _ 0 640 inb_S2048_S1024_0 inb_S2048_S16_640 _ (by decide) (by decide) _ _ x) ?_
        refine View.forall_pieces_cons (fun x => step_tcol (F := F) L fl _ 6 (by decide) (off5_blk L T2) _ 0 624 inb_S2048_S1024_0 inb_S2048_S16_624 _ (by decide) (by decide) _ _ x) ?_
        refine View.forall_pieces_cons (fun x => step_tcol (F := F) L fl _ 6 (by decide) (off5_blk L T2) _ 0 608 inb_S2048_S1024_0 inb_S2048_S16_608 _ (by decide) (by decide) _ _ x) ?_
        refine View.forall_pieces_cons (fun x => step_tcol (F := F) L fl _ 6 (by decide) (off5_blk L T2) _ 0 592 inb_S2048_S1024_0 inb_S2048_S16_592 _ (by decide) (by decide) _ _ x) ?_
        refine View.forall_pieces_cons (fun x => step_tcol (F := F) L fl _ 6 (by decide) (off5_blk L T2) _ 0 576 inb_S2048_S1024_0 inb_S2048_S16_576 _ (by decide) (by decide) _ _ x) ?_
        refine View.forall_pieces_cons (fun x => step_tcol (F := F) L fl _ 6 (by decide) (off5_blk L T2) _ 0 560 inb_S2048_S1024_0 inb_S2048_S16_560 _ (by decide) (by decide) _ _ x) ?_
        refine View.forall_pieces_cons (fun x => step_tcol (F := F) L fl _ 6 (by decide) (off5_blk L T2) _ 0 544 inb_S2048_S1024_0 inb_S2048_S16_544 _ (by decide) (by decide) _ _ x) ?_
        refine View.forall_pieces_cons (fun x => step_tcol (F := F) L fl _ 6 (by decide) (off5_blk L T2) _ 0 528 inb_S2048_S1024_0 inb_S2048_S16_528 _ (by decide) (by decide) _ _ x) ?_
        refine View.forall_pieces_cons (fun x => step_tcol (F := F) L fl _ 6 (by decide) (off5_blk L T2) _ 0 512 inb_S2048_S1024_0 inb_S2048_S16_512 _ (by decide) (by decide) _ _ x) ?_
        refine View.forall_pieces_cons (fun x => step_tcol (F := F) L fl _ 6 (by decide) (off5_blk L T2) _ 0 496 inb_S2048_S1024_0 inb_S2048_S16_496 _ (by decide) (by decide) _ _ x) ?_
        refine View.forall_pieces_cons (fun x => step_tcol (F := F) L fl _ 6 (by decide) (off5_blk L T2) _ 0 480 inb_S2048_S1024_0 inb_S2048_S16_480 _ (by decide) (by decide) _ _ x) ?_
        refine View.forall_pieces_cons (fun x => step_tcol (F := F) L fl _ 6 (by decide) (off5_blk L T2) _ 0 464 inb_S2048_S1024_0 inb_S2048_S16_464 _ (by decide) (by decide) _ _ x) ?_
        refine View.forall_pieces_cons (fun x => step_tcol (F := F) L fl _ 6 (by decide) (off5_blk L T2) _ 0 448 inb_S2048_S1024_0 inb_S2048_S16_448 _ (by decide) (by decide) _ _ x) ?_
        refine View.forall_pieces_cons (fun x => step_tcol (F := F) L fl _ 6 (by decide) (off5_blk L T2) _ 0 432 inb_S2048_S1024_0 inb_S2048_S16_432 _ (by decide) (by decide) _ _ x) ?_
        refine View.forall_pieces_cons (fun x => step_tcol (F := F) L fl _ 6 (by decide) (off5_blk L T2) _ 0 416 inb_S2048_S1024_0 inb_S2048_S16_416 _ (by decide) (by decide) _ _ x) ?_
        refine View.forall_pieces_cons (fun x => step_tcol (F := F) L fl _ 6 (by decide) (off5_blk L T2) _ 0 400 inb_S2048_S1024_0 inb_S2048_S16_400 _ (by decide) (by decide) _ _ x) ?_
        refine View.forall_pieces_cons (fun x => step_tcol (F := F) L fl _ 6 (by decide) (off5_blk L T2) _ 0 384 inb_S2048_S1024_0 inb_S2048_S16_384 _ (by decide) (by decide) _ _ x) ?_
        refine View.forall_pieces_cons (fun x => step_tcol (F := F) L fl _ 6 (by decide) (off5_blk L T2) _ 0 368 inb_S2048_S1024_0 inb_S2048_S16_368 _ (by decide) (by decide) _ _ x) ?_
        refine View.forall_pieces_cons (fun x => step_tcol (F := F) L fl _ 6 (by decide) (off5_blk L T2) _ 0 352 inb_S2048_S1024_0 inb_S2048_S16_352 _ (by decide) (by decide) _ _ x) ?_
        refine View.forall_pieces_cons (fun x => step_tcol (F := F) L fl _ 6 (by decide) (off5_blk L T2) _ 0 336 inb_S2048_S1024_0 inb_S2048_S16_336 _ (by decide) (by decide) _ _ x) ?_
        refine View.forall_pieces_cons (fun x => step_tcol (F := F) L fl _ 6 (by decide) (off5_blk L T2) _ 0 320 inb_S2048_S1024_0 inb_S2048_S16_320 _ (by decide) (by decide) _ _ x) ?_
        refine View.forall_pieces_cons (fun x => step_tcol (F := F) L fl _ 6 (by decide) (off5_blk L T2) _ 0 304 inb_S2048_S1024_0 inb_S2048_S16_304 _ (by decide) (by decide) _ _ x) ?_
        refine View.forall_pieces_cons (fun x => step_tcol (F := F) L fl _ 6 (by decide) (off5_blk L T2) _ 0 288 inb_S2048_S1024_0 inb_S2048_S16_288 _ (by decide) (by decide) _ _ x) ?_
        refine View.forall_pieces_cons (fun x => step_tcol (F := F) L fl _ 6 (by decide) (off5_blk L T2) _ 0 272 inb_S2048_S1024_0 inb_S2048_S16_272 _ (by decide) (by decide) _ _ x) ?_
        refine View.forall_pieces_cons (fun x => step_tcol (F := F) L fl _ 6 (by decide) (off5_blk L T2) _ 0 256 inb_S2048_S1024_0 inb_S2048_S16_256 _ (by decide) (by decide) _ _ x) ?_
        refine View.forall_pieces_cons (fun x => step_tcol (F := F) L fl _ 6 (by decide) (off5_blk L T2) _ 0 240 inb_S2048_S1024_0 inb_S2048_S16_240 _ (by decide) (by decide) _ _ x) ?_
        refine View.forall_pieces_cons (fun x => step_tcol (F := F) L fl _ 6 (by decide) (off5_blk L T2) _ 0 224 inb_S2048_S1024_0 inb_S2048_S16_224 _ (by decide) (by decide) _ _ x) ?_
        refine View.forall_pieces_cons (fun x => step_tcol (F := F) L fl _ 6 (by decide) (off5_blk L T2) _ 0 208 inb_S2048_S1024_0 inb_S2048_S16_208 _ (by decide) (by decide) _ _ x) ?_
        refine View.forall_pieces_cons (fun x => step_tcol (F := F) L fl _ 6 (by decide) (off5_blk L T2) _ 0 192 inb_S2048_S1024_0 inb_S2048_S16_192 _ (by decide) (by decide) _ _ x) ?_
        refine View.forall_pieces_cons (fun x => step_tcol (F := F) L fl _ 6 (by decide) (off5_blk L T2) _ 0 176 inb_S2048_S1024_0 inb_S2048_S16_176 _ (by decide) (by decide) _ _ x) ?_
        refine View.forall_pieces_cons (fun x => step_tcol (F := F) L fl _ 6 (by decide) (off5_blk L T2) _ 0 160 inb_S2048_S1024_0 inb_S2048_S16_160 _ (by decide) (by decide) _ _ x) ?_
        refine View.forall_pieces_cons (fun x => step_tcol (F := F) L fl _ 6 (by decide) (off5_blk L T2) _ 0 144 inb_S2048_S1024_0 inb_S2048_S16_144 _ (by decide) (by decide) _ _ x) ?_
        refine View.forall_pieces_cons (fun x => step_tcol (F := F) L fl _ 6 (by decide) (off5_blk L T2) _ 0 128 inb_S2048_S1024_0 inb_S2048_S16_128 _ (by decide) (by decide) _ _ x) ?_
        refine View.forall_pieces_cons (fun x => step_tcol (F := F) L fl _ 6 (by decide) (off5_blk L T2) _ 0 112 inb_S2048_S1024_0 inb_S2048_S16_112 _ (by decide) (by decide) _ _ x) ?_
        refine View.forall_pieces_cons (fun x => step_tcol (F := F) L fl _ 6 (by decide) (off5_blk L T2) _ 0 96 inb_S2048_S1024_0 inb_S2048_S16_96 _ (by decide) (by decide) _ _ x) ?_
        refine View.forall_pieces_cons (fun x => step_tcol (F := F) L fl _ 6 (by decide) (off5_blk L T2) _ 0 80 inb_S2048_S1024_0 inb_S2048_S16_80 _ (by decide) (by decide) _ _ x) ?_
        refine View.forall_pieces_cons (fun x => step_tcol (F := F) L fl _ 6 (by decide) (off5_blk L T2) _ 0 64 inb_S2048_S1024_0 inb_S2048_S16_64 _ (by decide) (by decide) _ _ x) ?_
        refine View.forall_pieces_cons (fun x => step_tcol (F := F) L fl _ 6 (by decide) (off5_blk L T2) _ 0 48 inb_S2048_S1024_0 inb_S2048_S16_48 _ (by decide) (by decide) _ _ x) ?_
        refine View.forall_pieces_cons (fun x => step_tcol (F := F) L fl _ 6 (by decide) (off5_blk L T2) _ 0 32 inb_S2048_S1024_0 inb_S2048_S16_32 _ (by decide) (by decide) _ _ x) ?_
        refine View.forall_pieces_cons (fun x => step_tcol (F := F) L fl _ 6 (by decide) (off5_blk L T2) _ 0 16 inb_S2048_S1024_0 inb_S2048_S16_16 _ (by decide) (by decide) _ _ x) ?_
        refine View.forall_pieces_cons (fun x => step_tcol (F := F) L fl _ 6 (by decide) (off5_blk L T2) _ 0 0 inb_S2048_S1024_0 inb_S2048_S16_0 _ (by decide) (by decide) _ _ x) ?_
        exact View.forall_pieces_nil
  rw [inv1_flight (F := F) d L fl qt tab O _ 5 _ (Or.inr (by decide))]
  iintro %_ HI
  unfold invF
  icases HI with ⟨-, %r5, %g15, %g25, %wb5, %o5, %ho5, ⟨%hT5, %hR5, %ho5_eq, %hV5⟩, Hg0, H1, Ht, H3, H2, H4r, Hg1, %W5, %hW5, HO⟩
  obtain rfl : o5 = ![0] := ho5_eq.trans e81
  have hin5 := hin_of d L g15 hT5
  sl_exec_parts (disch := decide)
  -- even block 6
  ihave H4j := (wb_join_a (F := F) d L _ _) $$ [H4r_2 H4r]
  · isplitl [H4r_2] <;> iassumption
  sl_for (inv0 d L fl qt tab O (insert (SemLoc.dma cc1_scratch8.sem, (default : HIx 1)) (insert (SemLoc.dma cc1_scratch9.sem, (default : HIx 1)) W5)) 6) $$ [Hmw Hg0 Ht H3 H1 H2 H4j Hg1 HO]
  case region => intro k _; exact pair0_region d L fl qt tab O _ 0#32 0#32 T3 _ k
  ·
    unfold inv0
    isplitl [Hmw]; · iexact Hmw
    iexists _; iexists _; iexists _; iexists _; iexists ![0]; iexists ho5
    isplitr; rotate_left
    · isplitl [Hg0]; rotate_left
      · isplitl [H1]; · iexact H1
        isplitl [Ht]; · iexact Ht
        isplitl [H3]; · iexact H3
        isplitl [H2]; · iexact H2
        isplitl [H4j]; · iexact H4j
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A6: the list's fifty words are not touched by the later stores
          intro i hi
          have hi0 := (mem_listM _ _ i).mp hi
          simp only [Matrix.cons_val_zero] at hi0
          exact (keep_word d L _ _ 1024 (by rfl) i (by omega)).symm
    · ipureintro
      -- HOLE B6: the values at the loop's entry
      obtain ⟨hTh, hRh, hRowsh⟩ := odd_to_even d L fl tab 5 (by decide) _ _ _ _ hV5
      have_entry even_entry
      refine key hfl hTh hRh hRowsh ?_ (by rfl) ?_ (by rfl) (by unfold lo; rfl)
      ·
        refine View.forall_pieces_cons (fun x => step_trow (F := F) L fl _ 7 (by decide) (off62_blk L T2) _ 1024 2032 inb_S2048_S1024_1024 inb_S2048_S16_2032 _ (by decide) (by decide) _ _ x) ?_
        refine View.forall_pieces_cons (fun x => step_trow (F := F) L fl _ 7 (by decide) (off62_blk L T2) _ 1024 2016 inb_S2048_S1024_1024 inb_S2048_S16_2016 _ (by decide) (by decide) _ _ x) ?_
        refine View.forall_pieces_cons (fun x => step_trow (F := F) L fl _ 7 (by decide) (off62_blk L T2) _ 1024 2000 inb_S2048_S1024_1024 inb_S2048_S16_2000 _ (by decide) (by decide) _ _ x) ?_
        refine View.forall_pieces_cons (fun x => step_trow (F := F) L fl _ 7 (by decide) (off62_blk L T2) _ 1024 1984 inb_S2048_S1024_1024 inb_S2048_S16_1984 _ (by decide) (by decide) _ _ x) ?_
        refine View.forall_pieces_cons (fun x => step_trow (F := F) L fl _ 7 (by decide) (off62_blk L T2) _ 1024 1968 inb_S2048_S1024_1024 inb_S2048_S16_1968 _ (by decide) (by decide) _ _ x) ?_
        refine View.forall_pieces_cons (fun x => step_trow (F := F) L fl _ 7 (by decide) (off62_blk L T2) _ 1024 1952 inb_S2048_S1024_1024 inb_S2048_S16_1952 _ (by decide) (by decide) _ _ x) ?_
        refine View.forall_pieces_cons (fun x => step_trow (F := F) L fl _ 7 (by decide) (off62_blk L T2) _ 1024 1936 inb_S2048_S1024_1024 inb_S2048_S16_1936 _ (by decide) (by decide) _ _ x) ?_
        refine View.forall_pieces_cons (fun x => step_trow (F := F) L fl _ 7 (by decide) (off62_blk L T2) _ 1024 1920 inb_S2048_S1024_1024 inb_S2048_S16_1920 _ (by decide) (by decide) _ _ x) ?_
        refine View.forall_pieces_cons (fun x => step_trow (F := F) L fl _ 7 (by decide) (off62_blk L T2) _ 1024 1904 inb_S2048_S1024_1024 inb_S2048_S16_1904 _ (by decide) (by decide) _ _ x) ?_
        refine View.forall_pieces_cons (fun x => step_trow (F := F) L fl _ 7 (by decide) (off62_blk L T2) _ 1024 1888 inb_S2048_S1024_1024 inb_S2048_S16_1888 _ (by decide) (by decide) _ _ x) ?_
        refine View.forall_pieces_cons (fun x => step_trow (F := F) L fl _ 7 (by decide) (off62_blk L T2) _ 1024 1872 inb_S2048_S1024_1024 inb_S2048_S16_1872 _ (by decide) (by decide) _ _ x) ?_
        refine View.forall_pieces_cons (fun x => step_trow (F := F) L fl _ 7 (by decide) (off62_blk L T2) _ 1024 1856 inb_S2048_S1024_1024 inb_S2048_S16_1856 _ (by decide) (by decide) _ _ x) ?_
        refine View.forall_pieces_cons (fun x => step_trow (F := F) L fl _ 7 (by decide) (off62_blk L T2) _ 1024 1840 inb_S2048_S1024_1024 inb_S2048_S16_1840 _ (by decide) (by decide) _ _ x) ?_
        refine View.forall_pieces_cons (fun x => step_trow (F := F) L fl _ 7 (by decide) (off62_blk L T2) _ 1024 1824 inb_S2048_S1024_1024 inb_S2048_S16_1824 _ (by decide) (by decide) _ _ x) ?_
        refine View.forall_pieces_cons (fun x => step_trow (F := F) L fl _ 7 (by decide) (off62_blk L T2) _ 1024 1808 inb_S2048_S1024_1024 inb_S2048_S16_1808 _ (by decide) (by decide) _ _ x) ?_
        refine View.forall_pieces_cons (fun x => step_trow (F := F) L fl _ 7 (by decide) (off62_blk L T2) _ 1024 1792 inb_S2048_S1024_1024 inb_S2048_S16_1792 _ (by decide) (by decide) _ _ x) ?_
        refine View.forall_pieces_cons (fun x => step_trow (F := F) L fl _ 7 (by decide) (off62_blk L T2) _ 1024 1776 inb_S2048_S1024_1024 inb_S2048_S16_1776 _ (by decide) (by decide) _ _ x) ?_
        refine View.forall_pieces_cons (fun x => step_trow (F := F) L fl _ 7 (by decide) (off62_blk L T2) _ 1024 1760 inb_S2048_S1024_1024 inb_S2048_S16_1760 _ (by decide) (by decide) _ _ x) ?_
        refine View.forall_pieces_cons (fun x => step_trow (F := F) L fl _ 7 (by decide) (off62_blk L T2) _ 1024 1744 inb_S2048_S1024_1024 inb_S2048_S16_1744 _ (by decide) (by decide) _ _ x) ?_
        refine View.forall_pieces_cons (fun x => step_trow (F := F) L fl _ 7 (by decide) (off62_blk L T2) _ 1024 1728 inb_S2048_S1024_1024 inb_S2048_S16_1728 _ (by decide) (by decide) _ _ x) ?_
        refine View.forall_pieces_cons (fun x => step_trow (F := F) L fl _ 7 (by decide) (off62_blk L T2) _ 1024 1712 inb_S2048_S1024_1024 inb_S2048_S16_1712 _ (by decide) (by decide) _ _ x) ?_
        refine View.forall_pieces_cons (fun x => step_trow (F := F) L fl _ 7 (by decide) (off62_blk L T2) _ 1024 1696 inb_S2048_S1024_1024 inb_S2048_S16_1696 _ (by decide) (by decide) _ _ x) ?_
        refine View.forall_pieces_cons (fun x => step_trow (F := F) L fl _ 7 (by decide) (off62_blk L T2) _ 1024 1680 inb_S2048_S1024_1024 inb_S2048_S16_1680 _ (by decide) (by decide) _ _ x) ?_
        refine View.forall_pieces_cons (fun x => step_trow (F := F) L fl _ 7 (by decide) (off62_blk L T2) _ 1024 1664 inb_S2048_S1024_1024 inb_S2048_S16_1664 _ (by decide) (by decide) _ _ x) ?_
        refine View.forall_pieces_cons (fun x => step_trow (F := F) L fl _ 7 (by decide) (off62_blk L T2) _ 1024 1648 inb_S2048_S1024_1024 inb_S2048_S16_1648 _ (by decide) (by decide) _ _ x) ?_
        refine View.forall_pieces_cons (fun x => step_trow (F := F) L fl _ 7 (by decide) (off62_blk L T2) _ 1024 1632 inb_S2048_S1024_1024 inb_S2048_S16_1632 _ (by decide) (by decide) _ _ x) ?_
        refine View.forall_pieces_cons (fun x => step_trow (F := F) L fl _ 7 (by decide) (off62_blk L T2) _ 1024 1616 inb_S2048_S1024_1024 inb_S2048_S16_1616 _ (by decide) (by decide) _ _ x) ?_
        refine View.forall_pieces_cons (fun x => step_trow (F := F) L fl _ 7 (by decide) (off62_blk L T2) _ 1024 1600 inb_S2048_S1024_1024 inb_S2048_S16_1600 _ (by decide) (by decide) _ _ x) ?_
        refine View.forall_pieces_cons (fun x => step_trow (F := F) L fl _ 7 (by decide) (off62_blk L T2) _ 1024 1584 inb_S2048_S1024_1024 inb_S2048_S16_1584 _ (by decide) (by decide) _ _ x) ?_
        refine View.forall_pieces_cons (fun x => step_trow (F := F) L fl _ 7 (by decide) (off62_blk L T2) _ 1024 1568 inb_S2048_S1024_1024 inb_S2048_S16_1568 _ (by decide) (by decide) _ _ x) ?_
        refine View.forall_pieces_cons (fun x => step_trow (F := F) L fl _ 7 (by decide) (off62_blk L T2) _ 1024 1552 inb_S2048_S1024_1024 inb_S2048_S16_1552 _ (by decide) (by decide) _ _ x) ?_
        refine View.forall_pieces_cons (fun x => step_trow (F := F) L fl _ 7 (by decide) (off62_blk L T2) _ 1024 1536 inb_S2048_S1024_1024 inb_S2048_S16_1536 _ (by decide) (by decide) _ _ x) ?_
        refine View.forall_pieces_cons (fun x => step_trow (F := F) L fl _ 7 (by decide) (off62_blk L T2) _ 1024 1520 inb_S2048_S1024_1024 inb_S2048_S16_1520 _ (by decide) (by decide) _ _ x) ?_
        refine View.forall_pieces_cons (fun x => step_trow (F := F) L fl _ 7 (by decide) (off62_blk L T2) _ 1024 1504 inb_S2048_S1024_1024 inb_S2048_S16_1504 _ (by decide) (by decide) _ _ x) ?_
        refine View.forall_pieces_cons (fun x => step_trow (F := F) L fl _ 7 (by decide) (off62_blk L T2) _ 1024 1488 inb_S2048_S1024_1024 inb_S2048_S16_1488 _ (by decide) (by decide) _ _ x) ?_
        refine View.forall_pieces_cons (fun x => step_trow (F := F) L fl _ 7 (by decide) (off62_blk L T2) _ 1024 1472 inb_S2048_S1024_1024 inb_S2048_S16_1472 _ (by decide) (by decide) _ _ x) ?_
        refine View.forall_pieces_cons (fun x => step_trow (F := F) L fl _ 7 (by decide) (off62_blk L T2) _ 1024 1456 inb_S2048_S1024_1024 inb_S2048_S16_1456 _ (by decide) (by decide) _ _ x) ?_
        refine View.forall_pieces_cons (fun x => step_trow (F := F) L fl _ 7 (by decide) (off62_blk L T2) _ 1024 1440 inb_S2048_S1024_1024 inb_S2048_S16_1440 _ (by decide) (by decide) _ _ x) ?_
        refine View.forall_pieces_cons (fun x => step_trow (F := F) L fl _ 7 (by decide) (off62_blk L T2) _ 1024 1424 inb_S2048_S1024_1024 inb_S2048_S16_1424 _ (by decide) (by decide) _ _ x) ?_
        refine View.forall_pieces_cons (fun x => step_trow (F := F) L fl _ 7 (by decide) (off62_blk L T2) _ 1024 1408 inb_S2048_S1024_1024 inb_S2048_S16_1408 _ (by decide) (by decide) _ _ x) ?_
        refine View.forall_pieces_cons (fun x => step_trow (F := F) L fl _ 7 (by decide) (off62_blk L T2) _ 1024 1392 inb_S2048_S1024_1024 inb_S2048_S16_1392 _ (by decide) (by decide) _ _ x) ?_
        refine View.forall_pieces_cons (fun x => step_trow (F := F) L fl _ 7 (by decide) (off62_blk L T2) _ 1024 1376 inb_S2048_S1024_1024 inb_S2048_S16_1376 _ (by decide) (by decide) _ _ x) ?_
        refine View.forall_pieces_cons (fun x => step_trow (F := F) L fl _ 7 (by decide) (off62_blk L T2) _ 1024 1360 inb_S2048_S1024_1024 inb_S2048_S16_1360 _ (by decide) (by decide) _ _ x) ?_
        refine View.forall_pieces_cons (fun x => step_trow (F := F) L fl _ 7 (by decide) (off62_blk L T2) _ 1024 1344 inb_S2048_S1024_1024 inb_S2048_S16_1344 _ (by decide) (by decide) _ _ x) ?_
        refine View.forall_pieces_cons (fun x => step_trow (F := F) L fl _ 7 (by decide) (off62_blk L T2) _ 1024 1328 inb_S2048_S1024_1024 inb_S2048_S16_1328 _ (by decide) (by decide) _ _ x) ?_
        refine View.forall_pieces_cons (fun x => step_trow (F := F) L fl _ 7 (by decide) (off62_blk L T2) _ 1024 1312 inb_S2048_S1024_1024 inb_S2048_S16_1312 _ (by decide) (by decide) _ _ x) ?_
        refine View.forall_pieces_cons (fun x => step_trow (F := F) L fl _ 7 (by decide) (off62_blk L T2) _ 1024 1296 inb_S2048_S1024_1024 inb_S2048_S16_1296 _ (by decide) (by decide) _ _ x) ?_
        refine View.forall_pieces_cons (fun x => step_trow (F := F) L fl _ 7 (by decide) (off62_blk L T2) _ 1024 1280 inb_S2048_S1024_1024 inb_S2048_S16_1280 _ (by decide) (by decide) _ _ x) ?_
        refine View.forall_pieces_cons (fun x => step_trow (F := F) L fl _ 7 (by decide) (off62_blk L T2) _ 1024 1264 inb_S2048_S1024_1024 inb_S2048_S16_1264 _ (by decide) (by decide) _ _ x) ?_
        refine View.forall_pieces_cons (fun x => step_trow (F := F) L fl _ 7 (by decide) (off62_blk L T2) _ 1024 1248 inb_S2048_S1024_1024 inb_S2048_S16_1248 _ (by decide) (by decide) _ _ x) ?_
        refine View.forall_pieces_cons (fun x => step_trow (F := F) L fl _ 7 (by decide) (off62_blk L T2) _ 1024 1232 inb_S2048_S1024_1024 inb_S2048_S16_1232 _ (by decide) (by decide) _ _ x) ?_
        refine View.forall_pieces_cons (fun x => step_trow (F := F) L fl _ 7 (by decide) (off62_blk L T2) _ 1024 1216 inb_S2048_S1024_1024 inb_S2048_S16_1216 _ (by decide) (by decide) _ _ x) ?_
        refine View.forall_pieces_cons (fun x => step_trow (F := F) L fl _ 7 (by decide) (off62_blk L T2) _ 1024 1200 inb_S2048_S1024_1024 inb_S2048_S16_1200 _ (by decide) (by decide) _ _ x) ?_
        refine View.forall_pieces_cons (fun x => step_trow (F := F) L fl _ 7 (by decide) (off62_blk L T2) _ 1024 1184 inb_S2048_S1024_1024 inb_S2048_S16_1184 _ (by decide) (by decide) _ _ x) ?_
        refine View.forall_pieces_cons (fun x => step_trow (F := F) L fl _ 7 (by decide) (off62_blk L T2) _ 1024 1168 inb_S2048_S1024_1024 inb_S2048_S16_1168 _ (by decide) (by decide) _ _ x) ?_
        refine View.forall_pieces_cons (fun x => step_trow (F := F) L fl _ 7 (by decide) (off62_blk L T2) _ 1024 1152 inb_S2048_S1024_1024 inb_S2048_S16_1152 _ (by decide) (by decide) _ _ x) ?_
        refine View.forall_pieces_cons (fun x => step_trow (F := F) L fl _ 7 (by decide) (off62_blk L T2) _ 1024 1136 inb_S2048_S1024_1024 inb_S2048_S16_1136 _ (by decide) (by decide) _ _ x) ?_
        refine View.forall_pieces_cons (fun x => step_trow (F := F) L fl _ 7 (by decide) (off62_blk L T2) _ 1024 1120 inb_S2048_S1024_1024 inb_S2048_S16_1120 _ (by decide) (by decide) _ _ x) ?_
        refine View.forall_pieces_cons (fun x => step_trow (F := F) L fl _ 7 (by decide) (off62_blk L T2) _ 1024 1104 inb_S2048_S1024_1024 inb_S2048_S16_1104 _ (by decide) (by decide) _ _ x) ?_
        refine View.forall_pieces_cons (fun x => step_trow (F := F) L fl _ 7 (by decide) (off62_blk L T2) _ 1024 1088 inb_S2048_S1024_1024 inb_S2048_S16_1088 _ (by decide) (by decide) _ _ x) ?_
        refine View.forall_pieces_cons (fun x => step_trow (F := F) L fl _ 7 (by decide) (off62_blk L T2) _ 1024 1072 inb_S2048_S1024_1024 inb_S2048_S16_1072 _ (by decide) (by decide) _ _ x) ?_
        refine View.forall_pieces_cons (fun x => step_trow (F := F) L fl _ 7 (by decide) (off62_blk L T2) _ 1024 1056 inb_S2048_S1024_1024 inb_S2048_S16_1056 _ (by decide) (by decide) _ _ x) ?_
        refine View.forall_pieces_cons (fun x => step_trow (F := F) L fl _ 7 (by decide) (off62_blk L T2) _ 1024 1040 inb_S2048_S1024_1024 inb_S2048_S16_1040 _ (by decide) (by decide) _ _ x) ?_
        refine View.forall_pieces_cons (fun x => step_trow (F := F) L fl _ 7 (by decide) (off62_blk L T2) _ 1024 1024 inb_S2048_S1024_1024 inb_S2048_S16_1024 _ (by decide) (by decide) _ _ x) ?_
        exact View.forall_pieces_nil
      ·
        refine View.forall_pieces_cons (fun x => step_tcol (F := F) L fl _ 7 (by decide) (off62_blk L T2) _ 1024 2032 inb_S2048_S1024_1024 inb_S2048_S16_2032 _ (by decide) (by decide) _ _ x) ?_
        refine View.forall_pieces_cons (fun x => step_tcol (F := F) L fl _ 7 (by decide) (off62_blk L T2) _ 1024 2016 inb_S2048_S1024_1024 inb_S2048_S16_2016 _ (by decide) (by decide) _ _ x) ?_
        refine View.forall_pieces_cons (fun x => step_tcol (F := F) L fl _ 7 (by decide) (off62_blk L T2) _ 1024 2000 inb_S2048_S1024_1024 inb_S2048_S16_2000 _ (by decide) (by decide) _ _ x) ?_
        refine View.forall_pieces_cons (fun x => step_tcol (F := F) L fl _ 7 (by decide) (off62_blk L T2) _ 1024 1984 inb_S2048_S1024_1024 inb_S2048_S16_1984 _ (by decide) (by decide) _ _ x) ?_
        refine View.forall_pieces_cons (fun x => step_tcol (F := F) L fl _ 7 (by decide) (off62_blk L T2) _ 1024 1968 inb_S2048_S1024_1024 inb_S2048_S16_1968 _ (by decide) (by decide) _ _ x) ?_
        refine View.forall_pieces_cons (fun x => step_tcol (F := F) L fl _ 7 (by decide) (off62_blk L T2) _ 1024 1952 inb_S2048_S1024_1024 inb_S2048_S16_1952 _ (by decide) (by decide) _ _ x) ?_
        refine View.forall_pieces_cons (fun x => step_tcol (F := F) L fl _ 7 (by decide) (off62_blk L T2) _ 1024 1936 inb_S2048_S1024_1024 inb_S2048_S16_1936 _ (by decide) (by decide) _ _ x) ?_
        refine View.forall_pieces_cons (fun x => step_tcol (F := F) L fl _ 7 (by decide) (off62_blk L T2) _ 1024 1920 inb_S2048_S1024_1024 inb_S2048_S16_1920 _ (by decide) (by decide) _ _ x) ?_
        refine View.forall_pieces_cons (fun x => step_tcol (F := F) L fl _ 7 (by decide) (off62_blk L T2) _ 1024 1904 inb_S2048_S1024_1024 inb_S2048_S16_1904 _ (by decide) (by decide) _ _ x) ?_
        refine View.forall_pieces_cons (fun x => step_tcol (F := F) L fl _ 7 (by decide) (off62_blk L T2) _ 1024 1888 inb_S2048_S1024_1024 inb_S2048_S16_1888 _ (by decide) (by decide) _ _ x) ?_
        refine View.forall_pieces_cons (fun x => step_tcol (F := F) L fl _ 7 (by decide) (off62_blk L T2) _ 1024 1872 inb_S2048_S1024_1024 inb_S2048_S16_1872 _ (by decide) (by decide) _ _ x) ?_
        refine View.forall_pieces_cons (fun x => step_tcol (F := F) L fl _ 7 (by decide) (off62_blk L T2) _ 1024 1856 inb_S2048_S1024_1024 inb_S2048_S16_1856 _ (by decide) (by decide) _ _ x) ?_
        refine View.forall_pieces_cons (fun x => step_tcol (F := F) L fl _ 7 (by decide) (off62_blk L T2) _ 1024 1840 inb_S2048_S1024_1024 inb_S2048_S16_1840 _ (by decide) (by decide) _ _ x) ?_
        refine View.forall_pieces_cons (fun x => step_tcol (F := F) L fl _ 7 (by decide) (off62_blk L T2) _ 1024 1824 inb_S2048_S1024_1024 inb_S2048_S16_1824 _ (by decide) (by decide) _ _ x) ?_
        refine View.forall_pieces_cons (fun x => step_tcol (F := F) L fl _ 7 (by decide) (off62_blk L T2) _ 1024 1808 inb_S2048_S1024_1024 inb_S2048_S16_1808 _ (by decide) (by decide) _ _ x) ?_
        refine View.forall_pieces_cons (fun x => step_tcol (F := F) L fl _ 7 (by decide) (off62_blk L T2) _ 1024 1792 inb_S2048_S1024_1024 inb_S2048_S16_1792 _ (by decide) (by decide) _ _ x) ?_
        refine View.forall_pieces_cons (fun x => step_tcol (F := F) L fl _ 7 (by decide) (off62_blk L T2) _ 1024 1776 inb_S2048_S1024_1024 inb_S2048_S16_1776 _ (by decide) (by decide) _ _ x) ?_
        refine View.forall_pieces_cons (fun x => step_tcol (F := F) L fl _ 7 (by decide) (off62_blk L T2) _ 1024 1760 inb_S2048_S1024_1024 inb_S2048_S16_1760 _ (by decide) (by decide) _ _ x) ?_
        refine View.forall_pieces_cons (fun x => step_tcol (F := F) L fl _ 7 (by decide) (off62_blk L T2) _ 1024 1744 inb_S2048_S1024_1024 inb_S2048_S16_1744 _ (by decide) (by decide) _ _ x) ?_
        refine View.forall_pieces_cons (fun x => step_tcol (F := F) L fl _ 7 (by decide) (off62_blk L T2) _ 1024 1728 inb_S2048_S1024_1024 inb_S2048_S16_1728 _ (by decide) (by decide) _ _ x) ?_
        refine View.forall_pieces_cons (fun x => step_tcol (F := F) L fl _ 7 (by decide) (off62_blk L T2) _ 1024 1712 inb_S2048_S1024_1024 inb_S2048_S16_1712 _ (by decide) (by decide) _ _ x) ?_
        refine View.forall_pieces_cons (fun x => step_tcol (F := F) L fl _ 7 (by decide) (off62_blk L T2) _ 1024 1696 inb_S2048_S1024_1024 inb_S2048_S16_1696 _ (by decide) (by decide) _ _ x) ?_
        refine View.forall_pieces_cons (fun x => step_tcol (F := F) L fl _ 7 (by decide) (off62_blk L T2) _ 1024 1680 inb_S2048_S1024_1024 inb_S2048_S16_1680 _ (by decide) (by decide) _ _ x) ?_
        refine View.forall_pieces_cons (fun x => step_tcol (F := F) L fl _ 7 (by decide) (off62_blk L T2) _ 1024 1664 inb_S2048_S1024_1024 inb_S2048_S16_1664 _ (by decide) (by decide) _ _ x) ?_
        refine View.forall_pieces_cons (fun x => step_tcol (F := F) L fl _ 7 (by decide) (off62_blk L T2) _ 1024 1648 inb_S2048_S1024_1024 inb_S2048_S16_1648 _ (by decide) (by decide) _ _ x) ?_
        refine View.forall_pieces_cons (fun x => step_tcol (F := F) L fl _ 7 (by decide) (off62_blk L T2) _ 1024 1632 inb_S2048_S1024_1024 inb_S2048_S16_1632 _ (by decide) (by decide) _ _ x) ?_
        refine View.forall_pieces_cons (fun x => step_tcol (F := F) L fl _ 7 (by decide) (off62_blk L T2) _ 1024 1616 inb_S2048_S1024_1024 inb_S2048_S16_1616 _ (by decide) (by decide) _ _ x) ?_
        refine View.forall_pieces_cons (fun x => step_tcol (F := F) L fl _ 7 (by decide) (off62_blk L T2) _ 1024 1600 inb_S2048_S1024_1024 inb_S2048_S16_1600 _ (by decide) (by decide) _ _ x) ?_
        refine View.forall_pieces_cons (fun x => step_tcol (F := F) L fl _ 7 (by decide) (off62_blk L T2) _ 1024 1584 inb_S2048_S1024_1024 inb_S2048_S16_1584 _ (by decide) (by decide) _ _ x) ?_
        refine View.forall_pieces_cons (fun x => step_tcol (F := F) L fl _ 7 (by decide) (off62_blk L T2) _ 1024 1568 inb_S2048_S1024_1024 inb_S2048_S16_1568 _ (by decide) (by decide) _ _ x) ?_
        refine View.forall_pieces_cons (fun x => step_tcol (F := F) L fl _ 7 (by decide) (off62_blk L T2) _ 1024 1552 inb_S2048_S1024_1024 inb_S2048_S16_1552 _ (by decide) (by decide) _ _ x) ?_
        refine View.forall_pieces_cons (fun x => step_tcol (F := F) L fl _ 7 (by decide) (off62_blk L T2) _ 1024 1536 inb_S2048_S1024_1024 inb_S2048_S16_1536 _ (by decide) (by decide) _ _ x) ?_
        refine View.forall_pieces_cons (fun x => step_tcol (F := F) L fl _ 7 (by decide) (off62_blk L T2) _ 1024 1520 inb_S2048_S1024_1024 inb_S2048_S16_1520 _ (by decide) (by decide) _ _ x) ?_
        refine View.forall_pieces_cons (fun x => step_tcol (F := F) L fl _ 7 (by decide) (off62_blk L T2) _ 1024 1504 inb_S2048_S1024_1024 inb_S2048_S16_1504 _ (by decide) (by decide) _ _ x) ?_
        refine View.forall_pieces_cons (fun x => step_tcol (F := F) L fl _ 7 (by decide) (off62_blk L T2) _ 1024 1488 inb_S2048_S1024_1024 inb_S2048_S16_1488 _ (by decide) (by decide) _ _ x) ?_
        refine View.forall_pieces_cons (fun x => step_tcol (F := F) L fl _ 7 (by decide) (off62_blk L T2) _ 1024 1472 inb_S2048_S1024_1024 inb_S2048_S16_1472 _ (by decide) (by decide) _ _ x) ?_
        refine View.forall_pieces_cons (fun x => step_tcol (F := F) L fl _ 7 (by decide) (off62_blk L T2) _ 1024 1456 inb_S2048_S1024_1024 inb_S2048_S16_1456 _ (by decide) (by decide) _ _ x) ?_
        refine View.forall_pieces_cons (fun x => step_tcol (F := F) L fl _ 7 (by decide) (off62_blk L T2) _ 1024 1440 inb_S2048_S1024_1024 inb_S2048_S16_1440 _ (by decide) (by decide) _ _ x) ?_
        refine View.forall_pieces_cons (fun x => step_tcol (F := F) L fl _ 7 (by decide) (off62_blk L T2) _ 1024 1424 inb_S2048_S1024_1024 inb_S2048_S16_1424 _ (by decide) (by decide) _ _ x) ?_
        refine View.forall_pieces_cons (fun x => step_tcol (F := F) L fl _ 7 (by decide) (off62_blk L T2) _ 1024 1408 inb_S2048_S1024_1024 inb_S2048_S16_1408 _ (by decide) (by decide) _ _ x) ?_
        refine View.forall_pieces_cons (fun x => step_tcol (F := F) L fl _ 7 (by decide) (off62_blk L T2) _ 1024 1392 inb_S2048_S1024_1024 inb_S2048_S16_1392 _ (by decide) (by decide) _ _ x) ?_
        refine View.forall_pieces_cons (fun x => step_tcol (F := F) L fl _ 7 (by decide) (off62_blk L T2) _ 1024 1376 inb_S2048_S1024_1024 inb_S2048_S16_1376 _ (by decide) (by decide) _ _ x) ?_
        refine View.forall_pieces_cons (fun x => step_tcol (F := F) L fl _ 7 (by decide) (off62_blk L T2) _ 1024 1360 inb_S2048_S1024_1024 inb_S2048_S16_1360 _ (by decide) (by decide) _ _ x) ?_
        refine View.forall_pieces_cons (fun x => step_tcol (F := F) L fl _ 7 (by decide) (off62_blk L T2) _ 1024 1344 inb_S2048_S1024_1024 inb_S2048_S16_1344 _ (by decide) (by decide) _ _ x) ?_
        refine View.forall_pieces_cons (fun x => step_tcol (F := F) L fl _ 7 (by decide) (off62_blk L T2) _ 1024 1328 inb_S2048_S1024_1024 inb_S2048_S16_1328 _ (by decide) (by decide) _ _ x) ?_
        refine View.forall_pieces_cons (fun x => step_tcol (F := F) L fl _ 7 (by decide) (off62_blk L T2) _ 1024 1312 inb_S2048_S1024_1024 inb_S2048_S16_1312 _ (by decide) (by decide) _ _ x) ?_
        refine View.forall_pieces_cons (fun x => step_tcol (F := F) L fl _ 7 (by decide) (off62_blk L T2) _ 1024 1296 inb_S2048_S1024_1024 inb_S2048_S16_1296 _ (by decide) (by decide) _ _ x) ?_
        refine View.forall_pieces_cons (fun x => step_tcol (F := F) L fl _ 7 (by decide) (off62_blk L T2) _ 1024 1280 inb_S2048_S1024_1024 inb_S2048_S16_1280 _ (by decide) (by decide) _ _ x) ?_
        refine View.forall_pieces_cons (fun x => step_tcol (F := F) L fl _ 7 (by decide) (off62_blk L T2) _ 1024 1264 inb_S2048_S1024_1024 inb_S2048_S16_1264 _ (by decide) (by decide) _ _ x) ?_
        refine View.forall_pieces_cons (fun x => step_tcol (F := F) L fl _ 7 (by decide) (off62_blk L T2) _ 1024 1248 inb_S2048_S1024_1024 inb_S2048_S16_1248 _ (by decide) (by decide) _ _ x) ?_
        refine View.forall_pieces_cons (fun x => step_tcol (F := F) L fl _ 7 (by decide) (off62_blk L T2) _ 1024 1232 inb_S2048_S1024_1024 inb_S2048_S16_1232 _ (by decide) (by decide) _ _ x) ?_
        refine View.forall_pieces_cons (fun x => step_tcol (F := F) L fl _ 7 (by decide) (off62_blk L T2) _ 1024 1216 inb_S2048_S1024_1024 inb_S2048_S16_1216 _ (by decide) (by decide) _ _ x) ?_
        refine View.forall_pieces_cons (fun x => step_tcol (F := F) L fl _ 7 (by decide) (off62_blk L T2) _ 1024 1200 inb_S2048_S1024_1024 inb_S2048_S16_1200 _ (by decide) (by decide) _ _ x) ?_
        refine View.forall_pieces_cons (fun x => step_tcol (F := F) L fl _ 7 (by decide) (off62_blk L T2) _ 1024 1184 inb_S2048_S1024_1024 inb_S2048_S16_1184 _ (by decide) (by decide) _ _ x) ?_
        refine View.forall_pieces_cons (fun x => step_tcol (F := F) L fl _ 7 (by decide) (off62_blk L T2) _ 1024 1168 inb_S2048_S1024_1024 inb_S2048_S16_1168 _ (by decide) (by decide) _ _ x) ?_
        refine View.forall_pieces_cons (fun x => step_tcol (F := F) L fl _ 7 (by decide) (off62_blk L T2) _ 1024 1152 inb_S2048_S1024_1024 inb_S2048_S16_1152 _ (by decide) (by decide) _ _ x) ?_
        refine View.forall_pieces_cons (fun x => step_tcol (F := F) L fl _ 7 (by decide) (off62_blk L T2) _ 1024 1136 inb_S2048_S1024_1024 inb_S2048_S16_1136 _ (by decide) (by decide) _ _ x) ?_
        refine View.forall_pieces_cons (fun x => step_tcol (F := F) L fl _ 7 (by decide) (off62_blk L T2) _ 1024 1120 inb_S2048_S1024_1024 inb_S2048_S16_1120 _ (by decide) (by decide) _ _ x) ?_
        refine View.forall_pieces_cons (fun x => step_tcol (F := F) L fl _ 7 (by decide) (off62_blk L T2) _ 1024 1104 inb_S2048_S1024_1024 inb_S2048_S16_1104 _ (by decide) (by decide) _ _ x) ?_
        refine View.forall_pieces_cons (fun x => step_tcol (F := F) L fl _ 7 (by decide) (off62_blk L T2) _ 1024 1088 inb_S2048_S1024_1024 inb_S2048_S16_1088 _ (by decide) (by decide) _ _ x) ?_
        refine View.forall_pieces_cons (fun x => step_tcol (F := F) L fl _ 7 (by decide) (off62_blk L T2) _ 1024 1072 inb_S2048_S1024_1024 inb_S2048_S16_1072 _ (by decide) (by decide) _ _ x) ?_
        refine View.forall_pieces_cons (fun x => step_tcol (F := F) L fl _ 7 (by decide) (off62_blk L T2) _ 1024 1056 inb_S2048_S1024_1024 inb_S2048_S16_1056 _ (by decide) (by decide) _ _ x) ?_
        refine View.forall_pieces_cons (fun x => step_tcol (F := F) L fl _ 7 (by decide) (off62_blk L T2) _ 1024 1040 inb_S2048_S1024_1024 inb_S2048_S16_1040 _ (by decide) (by decide) _ _ x) ?_
        refine View.forall_pieces_cons (fun x => step_tcol (F := F) L fl _ 7 (by decide) (off62_blk L T2) _ 1024 1024 inb_S2048_S1024_1024 inb_S2048_S16_1024 _ (by decide) (by decide) _ _ x) ?_
        exact View.forall_pieces_nil
  iintro %_ HI
  unfold inv0
  icases HI with ⟨-, %r6, %g16, %g26, %wb6, %o6, %ho6, ⟨%hT6, %hR6, %ho6_eq, %hV6⟩, Hg0, H1, Ht, H3, H2, H4r, Hg1, %W6, %hW6, HO⟩
  obtain rfl : o6 = ![1024] := ho6_eq.trans e8
  have hin6 := hin_of d L g16 hT6
  sl_exec_parts (disch := decide)
  -- odd block 7
  ihave H4j := (wb_join_b (F := F) d L _ _) $$ [H4r_2 H4r]
  · isplitl [H4r_2] <;> iassumption
  sl_for (inv1 d L fl qt tab O (insert (SemLoc.dma cc1_scratch10.sem, (default : HIx 1)) W6) 7) $$ [Hmw Hg0 Ht H3 H1 H2 H4j Hg1 HO]
  case region => intro k _; exact pair1_region d L fl qt tab O _ T3 _ k
  · rw [inv1_flight (F := F) d L fl qt tab O _ 7 _ (Or.inl (by decide))]
    unfold invF
    isplitl [Hmw]; · iexact Hmw
    iexists _; iexists _; iexists _; iexists _; iexists ![1024]; iexists ho6
    isplitr; rotate_left
    · isplitl [Hg0]; rotate_left
      · isplitl [H1]; · iexact H1
        isplitl [Ht]; · iexact Ht
        isplitl [H3]; · iexact H3
        isplitl [H2]; · iexact H2
        isplitl [H4j]; · iexact H4j
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A7: the list's fifty words are not touched by the later stores
          exact fun i _ => rfl
    · ipureintro
      -- HOLE B7: the values at the loop's entry
      obtain ⟨h71, h72, h73⟩ := even_to_odd d L fl tab 6 _ _ _ _ hV6
      exact ⟨hT6, hR6, by unfold lo1; rfl, h71, h72, fun h => absurd h (by decide), fun _ => h73, WbV_zero d L fl tab _ 7 1 _⟩
  rw [inv1_last (F := F) d L fl qt tab O _ 7 _ (by decide)]
  iintro %_ HI
  unfold invL
  icases HI with ⟨-, %r7, %g17, %g27, %wb7, ⟨%hT7, %hR7, %hV7⟩, Hg0, H1, Ht, H3, H2, H4r, Hg1, %W7, %hW7, HO⟩
  sl_exec_parts (disch := decide)
  sl_step
  -- the eight blocks hold the bag sums
  unfold tdA
  isplitl [Hi' Ht Hb0' Hb1' Hb2' Hb3' Hb4' Hb5' Hb6' Hb7']
  · isplitl [Hi']; · iapply (Entails.of_eq (pts_iV (F := F) d L qi _)); iexact Hi'
    iexists tab; isplitr; · ipureintro; exact hPK
    isplitl [Ht]; · iapply (Entails.of_eq (pts_tV (F := F) d L qt _)); iexact Ht
    rw [bigSep_fin8]
    isplitl [Hb0']
    · iapply (out_vals0_i (F := F) d L fl tab T0 _ _ _ (WbV_piecewise1_other d L fl tab (wL L).val 0 16 f4 wb hV.2.2.2.2.2))
      isplitr; rotate_left
      · iexact Hb0'
      · ipureintro; rfl
    isplitl [Hb1']
    · iapply (out_vals1_i (F := F) d L fl tab T0 _ _ _ hV1.2.2.2.2)
      isplitr; rotate_left
      · iexact Hb1'
      · ipureintro; rfl
    isplitl [Hb2']
    · iapply (out_vals0_i (F := F) d L fl tab T1 _ _ _ hV2.2.2.2.2.2)
      isplitr; rotate_left
      · iexact Hb2'
      · ipureintro; rfl
    isplitl [Hb3']
    · iapply (out_vals1_i (F := F) d L fl tab T1 _ _ _ hV3.2.2.2.2)
      isplitr; rotate_left
      · iexact Hb3'
      · ipureintro; rfl
    isplitl [Hb4']
    · iapply (out_vals0_i (F := F) d L fl tab T2 _ _ _ hV4.2.2.2.2.2)
      isplitr; rotate_left
      · iexact Hb4'
      · ipureintro; rfl
    isplitl [Hb5']
    · iapply (out_vals1_i (F := F) d L fl tab T2 _ _ _ hV5.2.2.2.2)
      isplitr; rotate_left
      · iexact Hb5'
      · ipureintro; rfl
    isplitl [Hb6']
    · iapply (out_vals0_i (F := F) d L fl tab T3 _ _ _ hV6.2.2.2.2.2)
      isplitr; rotate_left
      · iexact Hb6'
      · ipureintro; rfl
    iapply (out_vals1_i (F := F) d L fl tab T3 _ _ _ hV7.2.2.2.2)
    isplitr; rotate_left
    · iexact Hb7'
    · ipureintro; rfl
  isplitl [H0' H1 H2 H3 H4r_2 H4r Hbufs]
  · isplitl [H0' H1 H2 H3 H4r_2 H4r]
    · isplitl [H0']; · iexists _; iapply (Entails.of_eq (pts_s0 (F := F) d L _)); iexact H0'
      isplitl [H1]; · iexists _; iapply (Entails.of_eq (pts_s1 (F := F) d L _)); iexact H1
      isplitl [H2]; · iexists _; iapply (Entails.of_eq (pts_s2 (F := F) d L _)); iexact H2
      isplitl [H3]; · iexists _; iapply (Entails.of_eq (pts_s3 (F := F) d L _)); iexact H3
      ihave H4w := (wb_join0 (F := F) d L _ _) $$ [H4r_2 H4r]
      · isplitl [H4r_2] <;> iassumption
      iexists _; iapply (Entails.of_eq (pts_s4 (F := F) d L _)); iexact H4w
    · iexact Hbufs
  isplitl [Hg0 Hg1 Hi0 Hi1 Hw0 Hw1 Hsems]
  · isplitl [Hg0 Hg1 Hi0 Hi1 Hw0 Hw1]
    · isplitl [Hg0]; · iexact Hg0
      isplitl [Hg1]; · iexact Hg1
      isplitl [Hi0]; · iexact Hi0
      isplitl [Hi1]; · iexact Hi1
      isplitl [Hw0]; · iexact Hw0
      iexact Hw1
    · iexact Hsems
  iexists _; isplitr; rotate_left
  · iexact HO
  · ipureintro
    have s0 : ∀ p ∈ W, p ∈ W ∨ p.2 = none := fun p hp => .inl hp
    have ins : ∀ (X : Waits sig (HIx 1)) (s : SemLoc sig), (∀ p ∈ X, p ∈ W ∨ p.2 = none) →
        ∀ p ∈ insert (s, (default : HIx 1)) X, p ∈ W ∨ p.2 = none := by
      intro X s h p hp
      rcases Finset.mem_insert.mp hp with rfl | hp
      · exact .inr rfl
      · exact h p hp
    have tr : ∀ (X Y : Waits sig (HIx 1)), (∀ p ∈ Y, p ∈ X ∨ p.2 = none) → (∀ p ∈ X, p ∈ W ∨ p.2 = none) →
        ∀ p ∈ Y, p ∈ W ∨ p.2 = none := by
      intro X Y h hX p hp
      rcases h p hp with h' | h'
      · exact hX p h'
      · exact .inr h'
    have a0 := tr _ _ hW' (ins _ _ (ins _ _ s0))
    have a1 := tr _ _ hW1 (ins _ _ a0)
    have a2 := tr _ _ hW2 (ins _ _ (ins _ _ a1))
    have a3 := tr _ _ hW3 (ins _ _ (ins _ _ a2))
    have a4 := tr _ _ hW4 (ins _ _ (ins _ _ a3))
    have a5 := tr _ _ hW5 (ins _ _ (ins _ _ a4))
    have a6 := tr _ _ hW6 (ins _ _ (ins _ _ a5))
    have a7 := tr _ _ hW7 (ins _ _ a6)
    exact ins _ _ (ins _ _ a7)

end Tile

/-- The task, for every place, share, flat index array of vocabulary indices, debt and recorded waits. -/
theorem tileBody (PK : FVec F Spec.STab .f32 → Prop) : TileBody (F := F) PK :=
  fun d L fl hfl qi qt O W hO => tile_body d L facts PK fl hfl qi qt O W hO

end Cert.Proof.Bag

end
-- ==== Proof.TileChkB.lean ====
/-
  The side conditions the tile body states of each column-offset word it extracts: the word plus 0, 16, 32, 48 is a
  multiple of 16, and the sixteen lanes at each of those four offsets lie inside the 128 columns of a gathered row
  (whichever of the two row buffers and whichever of the 50 rows). Each holds when the word is 0 or 64; both cases are
  closed computations, for every trip of the enclosing loop.
-/
import proofs.«203835_g19404662243951_cont_8to1_399_35_alg».proof.Kernel

namespace Cert.Proof.TileChkB
open Idealize.ShloMosaic Cert.Kernel

/-- A property of words that holds at `0` and at `64` holds of every word that is one of the two. -/
theorem of_cases {p : BitVec 32 → Prop} (h0 : p 0#32) (h64 : p 64#32) {r : BitVec 32}
    (hr : r = 0#32 ∨ r = 64#32) : p r := by
  rcases hr with rfl | rfl
  · exact h0
  · exact h64

/-- The same for a property that also depends on the trip of a loop with finitely many trips. -/
theorem of_cases_trip {n : Nat} {p : Fin n → BitVec 32 → Prop} (h0 : ∀ t, p t 0#32) (h64 : ∀ t, p t 64#32)
    (t : Fin n) {r : BitVec 32} (hr : r = 0#32 ∨ r = 64#32) : p t r :=
  of_cases (p := p t) (h0 t) (h64 t) hr

/-! ## Each stated check, from the two cases -/

theorem chk1 (t : Fin k1_t3_loop.trips) {r : BitVec 32} (hr : r = 0#32 ∨ r = 64#32) : k1_chk1 t r :=
  of_cases_trip (p := k1_chk1) (by decide) (by decide) t hr
theorem chk2 (t : Fin k1_t3_loop.trips) {r : BitVec 32} (hr : r = 0#32 ∨ r = 64#32) : k1_chk2 t r :=
  of_cases_trip (p := k1_chk2) (by decide) (by decide) t hr
theorem chk3 (t : Fin k1_t3_loop.trips) {r : BitVec 32} (hr : r = 0#32 ∨ r = 64#32) : k1_chk3 t r :=
  of_cases_trip (p := k1_chk3) (by decide) (by decide) t hr
theorem chk4 (t : Fin k1_t3_loop.trips) {r : BitVec 32} (hr : r = 0#32 ∨ r = 64#32) : k1_chk4 t r :=
  of_cases_trip (p := k1_chk4) (by decide) (by decide) t hr
theorem chk5 (t : Fin k1_t3_loop.trips) {r : BitVec 32} (hr : r = 0#32 ∨ r = 64#32) : k1_chk5 t r :=
  of_cases_trip (p := k1_chk5) (by decide) (by decide) t hr
theorem chk6 (t : Fin k1_t3_loop.trips) {r : BitVec 32} (hr : r = 0#32 ∨ r = 64#32) : k1_chk6 t r :=
  of_cases_trip (p := k1_chk6) (by decide) (by decide) t hr
theorem chk7 (t : Fin k1_t3_loop.trips) {r : BitVec 32} (hr : r = 0#32 ∨ r = 64#32) : k1_chk7 t r :=
  of_cases_trip (p := k1_chk7) (by decide) (by decide) t hr
theorem chk8 (t : Fin k1_t3_loop.trips) {r : BitVec 32} (hr : r = 0#32 ∨ r = 64#32) : k1_chk8 t r :=
  of_cases_trip (p := k1_chk8) (by decide) (by decide) t hr
theorem chk9 (t : Fin k1_t3_loop.trips) {r : BitVec 32} (hr : r = 0#32 ∨ r = 64#32) : k1_chk9 t r :=
  of_cases_trip (p := k1_chk9) (by decide) (by decide) t hr
theorem chk10 (t : Fin k1_t3_loop.trips) {r : BitVec 32} (hr : r = 0#32 ∨ r = 64#32) : k1_chk10 t r :=
  of_cases_trip (p := k1_chk10) (by decide) (by decide) t hr
theorem chk11 (t : Fin k1_t3_loop.trips) {r : BitVec 32} (hr : r = 0#32 ∨ r = 64#32) : k1_chk11 t r :=
  of_cases_trip (p := k1_chk11) (by decide) (by decide) t hr
theorem chk12 (t : Fin k1_t3_loop.trips) {r : BitVec 32} (hr : r = 0#32 ∨ r = 64#32) : k1_chk12 t r :=
  of_cases_trip (p := k1_chk12) (by decide) (by decide) t hr
theorem chk13 (t : Fin k1_t3_loop.trips) {r : BitVec 32} (hr : r = 0#32 ∨ r = 64#32) : k1_chk13 t r :=
  of_cases_trip (p := k1_chk13) (by decide) (by decide) t hr
theorem chk14 (t : Fin k1_t3_loop.trips) {r : BitVec 32} (hr : r = 0#32 ∨ r = 64#32) : k1_chk14 t r :=
  of_cases_trip (p := k1_chk14) (by decide) (by decide) t hr
theorem chk15 (t : Fin k1_t3_loop.trips) {r : BitVec 32} (hr : r = 0#32 ∨ r = 64#32) : k1_chk15 t r :=
  of_cases_trip (p := k1_chk15) (by decide) (by decide) t hr
theorem chk16 (t : Fin k1_t3_loop.trips) {r : BitVec 32} (hr : r = 0#32 ∨ r = 64#32) : k1_chk16 t r :=
  of_cases_trip (p := k1_chk16) (by decide) (by decide) t hr
theorem chk17 {r : BitVec 32} (hr : r = 0#32 ∨ r = 64#32) : k1_chk17 r :=
  of_cases (p := k1_chk17) (by decide) (by decide) hr
theorem chk18 {r : BitVec 32} (hr : r = 0#32 ∨ r = 64#32) : k1_chk18 r :=
  of_cases (p := k1_chk18) (by decide) (by decide) hr
theorem chk19 (t : Fin k1_t4_loop.trips) {r : BitVec 32} (hr : r = 0#32 ∨ r = 64#32) : k1_chk19 t r :=
  of_cases_trip (p := k1_chk19) (by decide) (by decide) t hr
theorem chk20 (t : Fin k1_t4_loop.trips) {r : BitVec 32} (hr : r = 0#32 ∨ r = 64#32) : k1_chk20 t r :=
  of_cases_trip (p := k1_chk20) (by decide) (by decide) t hr
theorem chk21 (t : Fin k1_t4_loop.trips) {r : BitVec 32} (hr : r = 0#32 ∨ r = 64#32) : k1_chk21 t r :=
  of_cases_trip (p := k1_chk21) (by decide) (by decide) t hr
theorem chk22 (t : Fin k1_t4_loop.trips) {r : BitVec 32} (hr : r = 0#32 ∨ r = 64#32) : k1_chk22 t r :=
  of_cases_trip (p := k1_chk22) (by decide) (by decide) t hr
theorem chk23 (t : Fin k1_t4_loop.trips) {r : BitVec 32} (hr : r = 0#32 ∨ r = 64#32) : k1_chk23 t r :=
  of_cases_trip (p := k1_chk23) (by decide) (by decide) t hr
theorem chk24 (t : Fin k1_t4_loop.trips) {r : BitVec 32} (hr : r = 0#32 ∨ r = 64#32) : k1_chk24 t r :=
  of_cases_trip (p := k1_chk24) (by decide) (by decide) t hr
theorem chk25 (t : Fin k1_t4_loop.trips) {r : BitVec 32} (hr : r = 0#32 ∨ r = 64#32) : k1_chk25 t r :=
  of_cases_trip (p := k1_chk25) (by decide) (by decide) t hr
theorem chk26 (t : Fin k1_t4_loop.trips) {r : BitVec 32} (hr : r = 0#32 ∨ r = 64#32) : k1_chk26 t r :=
  of_cases_trip (p := k1_chk26) (by decide) (by decide) t hr
theorem chk27 (t : Fin k1_t4_loop.trips) {r : BitVec 32} (hr : r = 0#32 ∨ r = 64#32) : k1_chk27 t r :=
  of_cases_trip (p := k1_chk27) (by decide) (by decide) t hr
theorem chk28 (t : Fin k1_t4_loop.trips) {r : BitVec 32} (hr : r = 0#32 ∨ r = 64#32) : k1_chk28 t r :=
  of_cases_trip (p := k1_chk28) (by decide) (by decide) t hr
theorem chk29 (t : Fin k1_t4_loop.trips) {r : BitVec 32} (hr : r = 0#32 ∨ r = 64#32) : k1_chk29 t r :=
  of_cases_trip (p := k1_chk29) (by decide) (by decide) t hr
theorem chk30 (t : Fin k1_t4_loop.trips) {r : BitVec 32} (hr : r = 0#32 ∨ r = 64#32) : k1_chk30 t r :=
  of_cases_trip (p := k1_chk30) (by decide) (by decide) t hr
theorem chk31 (t : Fin k1_t4_loop.trips) {r : BitVec 32} (hr : r = 0#32 ∨ r = 64#32) : k1_chk31 t r :=
  of_cases_trip (p := k1_chk31) (by decide) (by decide) t hr
theorem chk32 (t : Fin k1_t4_loop.trips) {r : BitVec 32} (hr : r = 0#32 ∨ r = 64#32) : k1_chk32 t r :=
  of_cases_trip (p := k1_chk32) (by decide) (by decide) t hr
theorem chk33 (t : Fin k1_t4_loop.trips) {r : BitVec 32} (hr : r = 0#32 ∨ r = 64#32) : k1_chk33 t r :=
  of_cases_trip (p := k1_chk33) (by decide) (by decide) t hr
theorem chk34 (t : Fin k1_t4_loop.trips) {r : BitVec 32} (hr : r = 0#32 ∨ r = 64#32) : k1_chk34 t r :=
  of_cases_trip (p := k1_chk34) (by decide) (by decide) t hr
theorem chk35 {r : BitVec 32} (hr : r = 0#32 ∨ r = 64#32) : k1_chk35 r :=
  of_cases (p := k1_chk35) (by decide) (by decide) hr
theorem chk36 {r : BitVec 32} (hr : r = 0#32 ∨ r = 64#32) : k1_chk36 r :=
  of_cases (p := k1_chk36) (by decide) (by decide) hr
theorem chk37 (t : Fin k1_t6_loop.trips) {r : BitVec 32} (hr : r = 0#32 ∨ r = 64#32) : k1_chk37 t r :=
  of_cases_trip (p := k1_chk37) (by decide) (by decide) t hr
theorem chk38 (t : Fin k1_t6_loop.trips) {r : BitVec 32} (hr : r = 0#32 ∨ r = 64#32) : k1_chk38 t r :=
  of_cases_trip (p := k1_chk38) (by decide) (by decide) t hr
theorem chk39 (t : Fin k1_t6_loop.trips) {r : BitVec 32} (hr : r = 0#32 ∨ r = 64#32) : k1_chk39 t r :=
  of_cases_trip (p := k1_chk39) (by decide) (by decide) t hr
theorem chk40 (t : Fin k1_t6_loop.trips) {r : BitVec 32} (hr : r = 0#32 ∨ r = 64#32) : k1_chk40 t r :=
  of_cases_trip (p := k1_chk40) (by decide) (by decide) t hr
theorem chk41 (t : Fin k1_t6_loop.trips) {r : BitVec 32} (hr : r = 0#32 ∨ r = 64#32) : k1_chk41 t r :=
  of_cases_trip (p := k1_chk41) (by decide) (by decide) t hr
theorem chk42 (t : Fin k1_t6_loop.trips) {r : BitVec 32} (hr : r = 0#32 ∨ r = 64#32) : k1_chk42 t r :=
  of_cases_trip (p := k1_chk42) (by decide) (by decide) t hr
theorem chk43 (t : Fin k1_t6_loop.trips) {r : BitVec 32} (hr : r = 0#32 ∨ r = 64#32) : k1_chk43 t r :=
  of_cases_trip (p := k1_chk43) (by decide) (by decide) t hr
theorem chk44 (t : Fin k1_t6_loop.trips) {r : BitVec 32} (hr : r = 0#32 ∨ r = 64#32) : k1_chk44 t r :=
  of_cases_trip (p := k1_chk44) (by decide) (by decide) t hr
theorem chk45 (t : Fin k1_t6_loop.trips) {r : BitVec 32} (hr : r = 0#32 ∨ r = 64#32) : k1_chk45 t r :=
  of_cases_trip (p := k1_chk45) (by decide) (by decide) t hr
theorem chk46 (t : Fin k1_t6_loop.trips) {r : BitVec 32} (hr : r = 0#32 ∨ r = 64#32) : k1_chk46 t r :=
  of_cases_trip (p := k1_chk46) (by decide) (by decide) t hr
theorem chk47 (t : Fin k1_t6_loop.trips) {r : BitVec 32} (hr : r = 0#32 ∨ r = 64#32) : k1_chk47 t r :=
  of_cases_trip (p := k1_chk47) (by decide) (by decide) t hr
theorem chk48 (t : Fin k1_t6_loop.trips) {r : BitVec 32} (hr : r = 0#32 ∨ r = 64#32) : k1_chk48 t r :=
  of_cases_trip (p := k1_chk48) (by decide) (by decide) t hr
theorem chk49 (t : Fin k1_t6_loop.trips) {r : BitVec 32} (hr : r = 0#32 ∨ r = 64#32) : k1_chk49 t r :=
  of_cases_trip (p := k1_chk49) (by decide) (by decide) t hr
theorem chk50 (t : Fin k1_t6_loop.trips) {r : BitVec 32} (hr : r = 0#32 ∨ r = 64#32) : k1_chk50 t r :=
  of_cases_trip (p := k1_chk50) (by decide) (by decide) t hr
theorem chk51 (t : Fin k1_t6_loop.trips) {r : BitVec 32} (hr : r = 0#32 ∨ r = 64#32) : k1_chk51 t r :=
  of_cases_trip (p := k1_chk51) (by decide) (by decide) t hr
theorem chk52 (t : Fin k1_t6_loop.trips) {r : BitVec 32} (hr : r = 0#32 ∨ r = 64#32) : k1_chk52 t r :=
  of_cases_trip (p := k1_chk52) (by decide) (by decide) t hr
theorem chk53 {r : BitVec 32} (hr : r = 0#32 ∨ r = 64#32) : k1_chk53 r :=
  of_cases (p := k1_chk53) (by decide) (by decide) hr
theorem chk54 {r : BitVec 32} (hr : r = 0#32 ∨ r = 64#32) : k1_chk54 r :=
  of_cases (p := k1_chk54) (by decide) (by decide) hr
theorem chk55 (t : Fin k1_t7_loop.trips) {r : BitVec 32} (hr : r = 0#32 ∨ r = 64#32) : k1_chk55 t r :=
  of_cases_trip (p := k1_chk55) (by decide) (by decide) t hr
theorem chk56 (t : Fin k1_t7_loop.trips) {r : BitVec 32} (hr : r = 0#32 ∨ r = 64#32) : k1_chk56 t r :=
  of_cases_trip (p := k1_chk56) (by decide) (by decide) t hr
theorem chk57 (t : Fin k1_t7_loop.trips) {r : BitVec 32} (hr : r = 0#32 ∨ r = 64#32) : k1_chk57 t r :=
  of_cases_trip (p := k1_chk57) (by decide) (by decide) t hr
theorem chk58 (t : Fin k1_t7_loop.trips) {r : BitVec 32} (hr : r = 0#32 ∨ r = 64#32) : k1_chk58 t r :=
  of_cases_trip (p := k1_chk58) (by decide) (by decide) t hr
theorem chk59 (t : Fin k1_t7_loop.trips) {r : BitVec 32} (hr : r = 0#32 ∨ r = 64#32) : k1_chk59 t r :=
  of_cases_trip (p := k1_chk59) (by decide) (by decide) t hr
theorem chk60 (t : Fin k1_t7_loop.trips) {r : BitVec 32} (hr : r = 0#32 ∨ r = 64#32) : k1_chk60 t r :=
  of_cases_trip (p := k1_chk60) (by decide) (by decide) t hr
theorem chk61 (t : Fin k1_t7_loop.trips) {r : BitVec 32} (hr : r = 0#32 ∨ r = 64#32) : k1_chk61 t r :=
  of_cases_trip (p := k1_chk61) (by decide) (by decide) t hr
theorem chk62 (t : Fin k1_t7_loop.trips) {r : BitVec 32} (hr : r = 0#32 ∨ r = 64#32) : k1_chk62 t r :=
  of_cases_trip (p := k1_chk62) (by decide) (by decide) t hr
theorem chk63 (t : Fin k1_t7_loop.trips) {r : BitVec 32} (hr : r = 0#32 ∨ r = 64#32) : k1_chk63 t r :=
  of_cases_trip (p := k1_chk63) (by decide) (by decide) t hr
theorem chk64 (t : Fin k1_t7_loop.trips) {r : BitVec 32} (hr : r = 0#32 ∨ r = 64#32) : k1_chk64 t r :=
  of_cases_trip (p := k1_chk64) (by decide) (by decide) t hr
theorem chk65 (t : Fin k1_t7_loop.trips) {r : BitVec 32} (hr : r = 0#32 ∨ r = 64#32) : k1_chk65 t r :=
  of_cases_trip (p := k1_chk65) (by decide) (by decide) t hr
theorem chk66 (t : Fin k1_t7_loop.trips) {r : BitVec 32} (hr : r = 0#32 ∨ r = 64#32) : k1_chk66 t r :=
  of_cases_trip (p := k1_chk66) (by decide) (by decide) t hr
theorem chk67 (t : Fin k1_t7_loop.trips) {r : BitVec 32} (hr : r = 0#32 ∨ r = 64#32) : k1_chk67 t r :=
  of_cases_trip (p := k1_chk67) (by decide) (by decide) t hr
theorem chk68 (t : Fin k1_t7_loop.trips) {r : BitVec 32} (hr : r = 0#32 ∨ r = 64#32) : k1_chk68 t r :=
  of_cases_trip (p := k1_chk68) (by decide) (by decide) t hr
theorem chk69 (t : Fin k1_t7_loop.trips) {r : BitVec 32} (hr : r = 0#32 ∨ r = 64#32) : k1_chk69 t r :=
  of_cases_trip (p := k1_chk69) (by decide) (by decide) t hr
theorem chk70 (t : Fin k1_t7_loop.trips) {r : BitVec 32} (hr : r = 0#32 ∨ r = 64#32) : k1_chk70 t r :=
  of_cases_trip (p := k1_chk70) (by decide) (by decide) t hr
theorem chk71 {r : BitVec 32} (hr : r = 0#32 ∨ r = 64#32) : k1_chk71 r :=
  of_cases (p := k1_chk71) (by decide) (by decide) hr
theorem chk72 {r : BitVec 32} (hr : r = 0#32 ∨ r = 64#32) : k1_chk72 r :=
  of_cases (p := k1_chk72) (by decide) (by decide) hr

end Cert.Proof.TileChkB
-- ==== Proof.TileOutB.lean ====
/-
  The write-back's destination. A vector subcore's task writes its eight blocks of sixteen rows of the sums two per trip of
  its outer loop: at trip `t` blocks `2 t` and `2 t + 1`. The body slices each out of the sums' array at row
  `256 s + 128 c + 32 t + 16 r` (`s` the subcore, `c` its SparseCore, `r` = 0 or 1), which is row `16 (8 w + 2 t + r)`
  for the worker number `w = 2 s + c`: block `2 t + r` of worker `w`, part `8 w + 2 t + r` of the 256 row parts.
-/
import proofs.«203835_g19404662243951_cont_8to1_399_35_alg».proof.Proof.TilePreB

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The outer loop makes four trips. -/
theorem trips_t1 : k1_t1_loop.trips = 4 := by decide

/-- Twice a trip's number, and its successor, name a block of the eight. -/
theorem two_mul_lt (t : Fin k1_t1_loop.trips) : 2 * t.val < 8 := by have := t.isLt; have := trips_t1; omega
theorem two_mul_succ_lt (t : Fin k1_t1_loop.trips) : 2 * t.val + 1 < 8 := by have := t.isLt; have := trips_t1; omega

/-- The even and the odd block of trip `t`, as the body slices them out of the sums' array. -/
abbrev oBlkM0 (L : grid1.Coords) (t : Fin k1_t1_loop.trips) : Memref sig .scVector .hbm S16x64 .f32 :=
  (oV : Memref sig .scVector .hbm S4096x64 .f32).slice (Rect.unit (s := S4096x64) (k1_off59 L t 0#32) S16x64.size (k1_off59_inb L t 0)) (fun _ => rfl)
abbrev oBlkM1 (L : grid1.Coords) (t : Fin k1_t1_loop.trips) : Memref sig .scVector .hbm S16x64 .f32 :=
  (oV : Memref sig .scVector .hbm S4096x64 .f32).slice (Rect.unit (s := S4096x64) (k1_off59 L t 1#32) S16x64.size (k1_off59_inb L t 1)) (fun _ => rfl)

/-- The worker number is twice the subcore's number plus the SparseCore's. -/
theorem wL_val (L : grid1.Coords) : (wL L).val = (L 1).val * 2 + (L 0).val := rfl

/-- The body's rectangle for the even block of trip `t` is row part `8 w + 2 t`, -/
theorem rect0_eq (L : grid1.Coords) (t : Fin k1_t1_loop.trips) :
    Rect.unit (s := S4096x64) (k1_off59 L t 0#32) S16x64.size (k1_off59_inb L t 0) = blk (blkNo (wL L) ⟨2 * t.val, two_mul_lt t⟩) := by
  unfold blk Rect.part Rect.block
  congr 1 <;> funext a
  · rw [show k1_off59 L t 0#32 = _ from k1_off59_eq L t 0]
    match a with
    | 0 => simp [Shape.partIx, Shape.partSize, blkNo, wL_val]; omega
    | 1 => simp [Shape.partIx, Shape.partSize]
  · match a with
    | 0 => simp [Shape.partSize]
    | 1 => simp [Shape.partSize]

/-- and for the odd block row part `8 w + 2 t + 1`. -/
theorem rect1_eq (L : grid1.Coords) (t : Fin k1_t1_loop.trips) :
    Rect.unit (s := S4096x64) (k1_off59 L t 1#32) S16x64.size (k1_off59_inb L t 1) = blk (blkNo (wL L) ⟨2 * t.val + 1, two_mul_succ_lt t⟩) := by
  unfold blk Rect.part Rect.block
  congr 1 <;> funext a
  · rw [show k1_off59 L t 1#32 = _ from k1_off59_eq L t 1]
    match a with
    | 0 => simp [Shape.partIx, Shape.partSize, blkNo, wL_val]; omega
    | 1 => simp [Shape.partIx, Shape.partSize]
  · match a with
    | 0 => simp [Shape.partSize]
    | 1 => simp [Shape.partSize]

/-- So the slices' elements are those blocks'. -/
theorem set_oBlkM0 (L : grid1.Coords) (t : Fin k1_t1_loop.trips) :
    (oBlkM0 L t).view.set = blockSet (blkNo (wL L) ⟨2 * t.val, two_mul_lt t⟩) := by
  show ((oV : Memref sig .scVector .hbm S4096x64 .f32).view.slice (Rect.unit (s := S4096x64) (k1_off59 L t 0#32) S16x64.size (k1_off59_inb L t 0))).set
    = ((oV : Memref sig .scVector .hbm S4096x64 .f32).view.slice (blk (blkNo (wL L) ⟨2 * t.val, two_mul_lt t⟩))).set
  exact rect0_eq L t ▸ rfl
theorem set_oBlkM1 (L : grid1.Coords) (t : Fin k1_t1_loop.trips) :
    (oBlkM1 L t).view.set = blockSet (blkNo (wL L) ⟨2 * t.val + 1, two_mul_succ_lt t⟩) := by
  show ((oV : Memref sig .scVector .hbm S4096x64 .f32).view.slice (Rect.unit (s := S4096x64) (k1_off59 L t 1#32) S16x64.size (k1_off59_inb L t 1))).set
    = ((oV : Memref sig .scVector .hbm S4096x64 .f32).view.slice (blk (blkNo (wL L) ⟨2 * t.val + 1, two_mul_succ_lt t⟩))).set
  exact rect1_eq L t ▸ rfl

/-- The slices held at contents `f` are the blocks of the sums' array held at `f`. -/
theorem pts_oBlkM0 (d : Dev nD) (L : grid1.Coords) (t : Fin k1_t1_loop.trips) (f : Buf (Elt F) (oLoc d)) :
    ((oBlkM0 L t).view.loc (V d (cV L) (jV L)) ↦[(oBlkM0 L t).view.set]{fullShare} f : sProp 𝕄)
      = oLoc d ↦[blockSet (blkNo (wL L) ⟨2 * t.val, two_mul_lt t⟩)]{fullShare} f := by
  rw [set_oBlkM0]
theorem pts_oBlkM1 (d : Dev nD) (L : grid1.Coords) (t : Fin k1_t1_loop.trips) (f : Buf (Elt F) (oLoc d)) :
    ((oBlkM1 L t).view.loc (V d (cV L) (jV L)) ↦[(oBlkM1 L t).view.set]{fullShare} f : sProp 𝕄)
      = oLoc d ↦[blockSet (blkNo (wL L) ⟨2 * t.val + 1, two_mul_succ_lt t⟩)]{fullShare} f := by
  rw [set_oBlkM1]

/-- Eight conjuncts, one by one. -/
theorem bigSep_fin8 (Φ : Fin 8 → sProp 𝕄) :
    bigSep (Finset.univ : Finset (Fin 8)) Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

end Cert.Proof.BagB
end
-- ==== Proof.TileAbbrevB.lean ====
/-
  The pieces of a vector subcore's scratches the bag-sum kernel's copies name — the two slots of the rows scratch and of the
  write-back scratch, a bag's list of fifty row numbers, the table as a gather's source — and the two facts about the
  scratches' words its waits and checks rest on: every word of the row-number scratch names a row of the table (`TixB`),
  every word of the column-offset scratch is 0 or 64 (`RvB`).
-/
import proofs.«203835_g19404662243951_cont_8to1_399_35_alg».proof.Proof.TilePreB
import proofs.«203835_g19404662243951_cont_8to1_399_35_alg».proof.Proof.PayB
import proofs.«203835_g19404662243951_cont_8to1_399_35_alg».proof.Proof.TileB
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

abbrev listM (o : Fin 1 → Nat) (ho : ∀ a, o a + S50.size a ≤ S2048.size a) : Memref sig .scVector .vmem S50 .i32 :=
  (sTix : Memref sig .scVector .vmem S2048 .i32).slice (Rect.unit (s := S2048) o S50.size ho) (fun _ => rfl)
abbrev h0M : Memref sig .scVector .vmem S50x128 .f32 :=
  ((sRows : Memref sig .scVector .vmem S2x50x128 .f32).slice (Rect.unit (s := S2x50x128) ![0, 0, 0] S1x50x128.size inb_S2x50x128_S1x50x128_0_0_0) (fun _ => rfl)).squeeze S50x128 squeezes_S1x50x128_S50x128
abbrev h1M : Memref sig .scVector .vmem S50x128 .f32 :=
  ((sRows : Memref sig .scVector .vmem S2x50x128 .f32).slice (Rect.unit (s := S2x50x128) ![1, 0, 0] S1x50x128.size inb_S2x50x128_S1x50x128_1_0_0) (fun _ => rfl)).squeeze S50x128 squeezes_S1x50x128_S50x128
abbrev slot0M : Memref sig .scVector .vmem S16x64 .f32 :=
  ((sWb : Memref sig .scVector .vmem S2x16x64 .f32).slice (Rect.unit (s := S2x16x64) ![0, 0, 0] S1x16x64.size inb_S2x16x64_S1x16x64_0_0_0) (fun _ => rfl)).squeeze S16x64 squeezes_S1x16x64_S16x64
abbrev slot1M : Memref sig .scVector .vmem S16x64 .f32 :=
  ((sWb : Memref sig .scVector .vmem S2x16x64 .f32).slice (Rect.unit (s := S2x16x64) ![1, 0, 0] S1x16x64.size inb_S2x16x64_S1x16x64_1_0_0) (fun _ => rfl)).squeeze S16x64 squeezes_S1x16x64_S16x64
abbrev tVM : Memref sig .scVector .hbm S507904x128 .f32 :=
  (tV : Memref sig .scVector .hbm S507904x128 .f32).slice (Rect.unit (s := S507904x128) ![0, 0] S507904x128.size inb_S507904x128_S507904x128_0_0) (fun _ => rfl)

/-- The offset of list `2 k` of the current half, as one word of offsets. -/
def lo (k : Nat) : Fin 1 → Nat := ![min (128 * k) 1024]
theorem lo_inb (k : Nat) : ∀ a, lo k a + S50.size a ≤ S2048.size a := by
  intro a; obtain rfl : a = 0 := Subsingleton.elim _ _
  show min (128 * k) 1024 + 50 ≤ 2048
  omega

/-- Every word of the row-number scratch names a row of the table; every word of the column-offset scratch is 0 or 64. -/
def TixB (g1 : Buf (Elt F) ((sTix : Memref sig .scVector .vmem S2048 .i32).view.loc (thr d L))) : Prop := ∀ i, (g1 i).toNat < 507904
def RvB (g2 : Buf (Elt F) ((sRv : Memref sig .scVector .vmem S2048 .i32).view.loc (thr d L))) : Prop := ∀ i, g2 i = 0#32 ∨ g2 i = 64#32

omit [FloatOps F] in
theorem hin_of (g1 : Buf (Elt F) ((sTix : Memref sig .scVector .vmem S2048 .i32).view.loc (thr d L)))
    (hT : TixB d L g1) (o : Fin 1 → Nat) (ho : ∀ a, o a + S50.size a ≤ S2048.size a) (x) :
    ((listM o ho).view.read (Elt F) g1 x).toNat < S507904x128.size (gathers_S507904x128_S50x128).axis := hT _

theorem cond4_lt : ∀ k : Fin k1_t2_loop.trips, k.val < 7 → k1_cond4 k = 1#1 := by decide
theorem cond4_ge : ∀ k : Fin k1_t2_loop.trips, ¬ k.val < 7 → ¬ k1_cond4 k = 1#1 := by decide
theorem cond5_lt : ∀ (t : Fin k1_t1_loop.trips) (k : Fin k1_t2_loop.trips), k.val < 7 → ¬ k1_cond5 t k = 1#1 := by decide
theorem cond5_ge0 : ∀ k : Fin k1_t2_loop.trips, ¬ k.val < 7 → k1_cond5 ⟨0, by decide⟩ k = 1#1 := by decide

omit [FloatOps F] d L in
theorem listM_congr {o o' : Fin 1 → Nat} (e : o = o') (ho : ∀ a, o a + S50.size a ≤ S2048.size a) (ho' : ∀ a, o' a + S50.size a ≤ S2048.size a) :
    listM o ho = listM o' ho' := by subst e; rfl
theorem trips2 : k1_t2_loop.trips = 8 := by decide

theorem cond5_ge : ∀ (t : Fin k1_t1_loop.trips) (k : Fin k1_t2_loop.trips), ¬ k.val < 7 → k1_cond5 t k = 1#1 := by decide

end Tile

end Cert.Proof.BagB
end
-- ==== Proof.TileValB.lean ====
/-
  The values one trip of a pair loop moves, as pure facts of buffers' contents: what a gather of fifty table rows
  lands, what a slot of the rows scratch reads after it, what a sixteen-lane load of a gathered row reads, and the
  facts the loops carry — the row-number and column-offset scratches hold the table rows and column offsets of the
  block's index words, a landed slot holds the table rows of its bag's words, the write-back scratch holds the sums
  of the bags done.
-/
import proofs.«203835_g19404662243951_cont_8to1_399_35_alg».proof.Proof.TileAbbrevB
import proofs.«203835_g19404662243951_cont_8to1_399_35_alg».proof.Proof.AccMath
import Idealize.ShloMosaic.Lib.ValueIdx
import Idealize.ShloMosaic.Lib.ValueLayout

noncomputable section

namespace Cert.Proof.BagB
open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F]

section Tile

variable (d : Dev nD) (L : grid1.Coords)

/-! ## A gather's landing -/

/-- Word `j` of the list at offset `o` of the row-number scratch is word `o + j` of the scratch. -/
theorem list_read (g1 : Buf (Elt F) ((sTix : Memref sig .scVector .vmem S2048 .i32).view.loc (thr d L)))
    (o : Fin 1 → Nat) (ho : ∀ a, o a + S50.size a ≤ S2048.size a) (j : Fin 50) (h : o 0 + j.val < 2048) :
    (listM o ho).view.read (Elt F) g1 (ix1 j) = g1 (ix1 ⟨o 0 + j.val, h⟩) := by
  rw [View.read_apply, cast_eq]
  congr 1
  funext a; apply Fin.ext
  match a with
  | ⟨0, _⟩ => show o 0 + 1 * j.val = o 0 + j.val; omega

/-- Row `j`, column `c` of what a gather of the fifty rows a list names lands: the table at the row the list's `j`-th
    word names. -/
theorem gather_read (tab : FVec F Spec.STab .f32) (idx : S50.Idx → Elt F .i32) (hn : S50.numel = 50)
    (hin : ∀ x, (idx x).toNat < S507904x128.size (gathers_S507904x128_S50x128).axis)
    (j : Fin 50) (c : Fin 128) :
    SparseCore.gatherPayload gathers_S507904x128_S50x128 (tVM.view.read (Elt F) tab) (SparseCore.rows idx hn hin) (ix2 j c)
      = tab (ix2 ⟨(idx (ix1 j)).toNat, hin (ix1 j)⟩ c) := by
  have hrm : S50.rowMajor.symm (j.cast hn.symm) = ix1 j := by
    rw [Equiv.symm_apply_eq]; apply Fin.ext; rw [Shape.rowMajor_val_one]; rfl
  unfold SparseCore.gatherPayload
  rw [View.read_apply, cast_eq]
  congr 1
  funext a; apply Fin.ext
  match a with
  | ⟨0, _⟩ =>
    have h0 := Shape.Gathers.idx_axis gathers_S507904x128_S50x128 (SparseCore.rows idx hn hin) (ix2 j c)
    show 0 + 1 * ((gathers_S507904x128_S50x128.idx (SparseCore.rows idx hn hin) (ix2 j c)) gathers_S507904x128_S50x128.axis).val
      = (idx (ix1 j)).toNat
    rw [h0]
    show 0 + 1 * (idx (S50.rowMajor.symm (j.cast hn.symm))).toNat = _
    rw [hrm]; omega
  | ⟨1, _⟩ =>
    have h1 := Shape.Gathers.idx_of_ne gathers_S507904x128_S50x128 (SparseCore.rows idx hn hin) (ix2 j c) ⟨1, by decide⟩ (by decide)
    show 0 + 1 * ((gathers_S507904x128_S50x128.idx (SparseCore.rows idx hn hin) (ix2 j c)) ⟨1, by decide⟩).val = c.val
    rw [h1]
    show 0 + 1 * c.val = c.val
    omega

/-! ## A slot of the rows scratch after a landing -/

omit [FloatOps F] in
theorem ix2_eta {n m : Nat} (x : (⟨2, ![n, m]⟩ : Shape).Idx) : x = ix2 (x 0) (x 1) := by
  funext a
  match a with
  | ⟨0, _⟩ => rfl
  | ⟨1, _⟩ => rfl

omit [FloatOps F] in
/-- Entry `(j, c)` of slot 0 is entry `(0, j, c)` of the rows scratch; -/
theorem h0M_emb (j : Fin 50) (c : Fin 128) : (h0M).view.emb (ix2 j c) = ix3 (0 : Fin 2) j c := by
  show (Rect.unit (s := S2x50x128) ![0, 0, 0] S1x50x128.size inb_S2x50x128_S1x50x128_0_0_0).emb
    (Shape.reshapeEquiv squeezes_S1x50x128_S50x128.numel_eq (ix2 j c)) = _
  rw [reshapeEquiv_ix2_1ab]
  funext a; apply Fin.ext
  match a with
  | ⟨0, _⟩ => rfl
  | ⟨1, _⟩ => show 0 + 1 * j.val = j.val; omega
  | ⟨2, _⟩ => show 0 + 1 * c.val = c.val; omega

omit [FloatOps F] in
/-- of slot 1, entry `(1, j, c)`. -/
theorem h1M_emb (j : Fin 50) (c : Fin 128) : (h1M).view.emb (ix2 j c) = ix3 (1 : Fin 2) j c := by
  show (Rect.unit (s := S2x50x128) ![1, 0, 0] S1x50x128.size inb_S2x50x128_S1x50x128_1_0_0).emb
    (Shape.reshapeEquiv squeezes_S1x50x128_S50x128.numel_eq (ix2 j c)) = _
  rw [reshapeEquiv_ix2_1ab]
  funext a; apply Fin.ext
  match a with
  | ⟨0, _⟩ => rfl
  | ⟨1, _⟩ => show 0 + 1 * j.val = j.val; omega
  | ⟨2, _⟩ => show 0 + 1 * c.val = c.val; omega

variable (r : Buf (Elt F) ((sRows : Memref sig .scVector .vmem S2x50x128 .f32).view.loc (thr d L)))
  (pay : S50x128.Idx → Elt F .f32)

/-- After a landing in slot 0 the slot reads what landed, -/
theorem write_h0_same (j : Fin 50) (c : Fin 128) :
    View.write (Elt F) (h0M).view r pay Finset.univ (ix3 (0 : Fin 2) j c) = pay (ix2 j c) := by
  rw [← h0M_emb, View.write_emb_of_mem _ _ (Finset.mem_univ _), cast_eq]

/-- and slot 1 what it held. -/
theorem write_h0_other (j : Fin 50) (c : Fin 128) :
    View.write (Elt F) (h0M).view r pay Finset.univ (ix3 (1 : Fin 2) j c) = r (ix3 (1 : Fin 2) j c) := by
  refine View.write_of_not_mem _ _ _ fun hmem => ?_
  obtain ⟨x, -, hx⟩ := Finset.mem_map.mp (show _ ∈ Finset.map _ _ from hmem)
  obtain ⟨x0, x1, rfl⟩ : ∃ (a : Fin 50) (b : Fin 128), x = ix2 a b := ⟨x 0, x 1, ix2_eta x⟩
  rw [h0M_emb] at hx
  have h0 := congrArg (fun i : S2x50x128.Idx => (i 0).val) hx
  exact absurd h0 (show ¬ ((_ : ℕ) = _) from by simp [ix3])

/-- After a landing in slot 1 the slot reads what landed, -/
theorem write_h1_same (j : Fin 50) (c : Fin 128) :
    View.write (Elt F) (h1M).view r pay Finset.univ (ix3 (1 : Fin 2) j c) = pay (ix2 j c) := by
  rw [← h1M_emb, View.write_emb_of_mem _ _ (Finset.mem_univ _), cast_eq]

/-- and slot 0 what it held. -/
theorem write_h1_other (j : Fin 50) (c : Fin 128) :
    View.write (Elt F) (h1M).view r pay Finset.univ (ix3 (0 : Fin 2) j c) = r (ix3 (0 : Fin 2) j c) := by
  refine View.write_of_not_mem _ _ _ fun hmem => ?_
  obtain ⟨x, -, hx⟩ := Finset.mem_map.mp (show _ ∈ Finset.map _ _ from hmem)
  obtain ⟨x0, x1, rfl⟩ : ∃ (a : Fin 50) (b : Fin 128), x = ix2 a b := ⟨x 0, x 1, ix2_eta x⟩
  rw [h1M_emb] at hx
  have h0 := congrArg (fun i : S2x50x128.Idx => (i 0).val) hx
  exact absurd h0 (show ¬ ((_ : ℕ) = _) from by simp [ix3])

/-! ## A sixteen-lane load of a gathered row -/

/-- A load of sixteen lanes of the rows scratch at offsets `(sl, row, col)` reads, at lane `l`, the scratch at
    `(sl, row, col + l)`. -/
theorem rows_load (off : Fin 3 → Nat) (inb : ∀ a, off a + S1x1x16.size a ≤ S2x50x128.size a) (l : S1x1x16.Idx) :
    (sRows : Memref sig .scVector .vmem S2x50x128 .f32).view.readAt (Elt F) (Rect.unit (s := S2x50x128) off S1x1x16.size inb).toLoadRect r l
      = r (ix3 (⟨off 0, by have := inb 0; change off 0 + 1 ≤ 2 at this; omega⟩ : Fin 2)
            (⟨off 1, by have := inb 1; change off 1 + 1 ≤ 50 at this; omega⟩ : Fin 50)
            (⟨off 2 + (l 2).val, by have := inb 2; change off 2 + 16 ≤ 128 at this; have hl : (l 2).val < 16 := (l 2).isLt; omega⟩ : Fin 128)) := by
  have h0 : (l 0).val = 0 := by have : (l 0).val < 1 := (l 0).isLt; omega
  have h1 : (l 1).val = 0 := by have : (l 1).val < 1 := (l 1).isLt; omega
  rw [View.readAt_apply, View.read_apply, cast_eq]
  congr 1
  funext a; apply Fin.ext
  match a with
  | ⟨0, _⟩ => show off 0 + 1 * (l 0).val = off 0; rw [h0]; omega
  | ⟨1, _⟩ => show off 1 + 1 * (l 1).val = off 1; rw [h1]; omega
  | ⟨2, _⟩ => show off 2 + 1 * (l 2).val = off 2 + (l 2).val; omega

/-! ## The offsets of the accumulate's loads

Each sixteen-lane load of a gathered row is at a slot, a row — sixteen times the group's number plus the row's place in the
group, or row 48 or 49 after the groups — and the row's column offset word plus sixteen times the accumulator's number. -/

section Offs
theorem k1_off9_form (k1_t3 : Fin k1_t3_loop.trips) (v1667 c0_i32_693 : BitVec 32) :
    k1_off9 k1_t3 v1667 c0_i32_693 = ![0, 16 * k1_t3.val + 0, (v1667 + c0_i32_693).toNat] := by
  funext a
  match a with
  | ⟨0, _⟩ => rfl
  | ⟨1, _⟩ => exact (show ∀ k1_t3 : Fin k1_t3_loop.trips, k1_off9 k1_t3 0#32 0#32 1 = 16 * k1_t3.val + 0 from by decide +kernel) k1_t3
  | ⟨2, _⟩ => rfl

theorem k1_off10_form (k1_t3 : Fin k1_t3_loop.trips) (v1703 c0_i32_703 : BitVec 32) :
    k1_off10 k1_t3 v1703 c0_i32_703 = ![0, 16 * k1_t3.val + 1, (v1703 + c0_i32_703).toNat] := by
  funext a
  match a with
  | ⟨0, _⟩ => rfl
  | ⟨1, _⟩ => exact (show ∀ k1_t3 : Fin k1_t3_loop.trips, k1_off10 k1_t3 0#32 0#32 1 = 16 * k1_t3.val + 1 from by decide +kernel) k1_t3
  | ⟨2, _⟩ => rfl

theorem k1_off11_form (k1_t3 : Fin k1_t3_loop.trips) (v1739 c0_i32_713 : BitVec 32) :
    k1_off11 k1_t3 v1739 c0_i32_713 = ![0, 16 * k1_t3.val + 2, (v1739 + c0_i32_713).toNat] := by
  funext a
  match a with
  | ⟨0, _⟩ => rfl
  | ⟨1, _⟩ => exact (show ∀ k1_t3 : Fin k1_t3_loop.trips, k1_off11 k1_t3 0#32 0#32 1 = 16 * k1_t3.val + 2 from by decide +kernel) k1_t3
  | ⟨2, _⟩ => rfl

theorem k1_off12_form (k1_t3 : Fin k1_t3_loop.trips) (v1775 c0_i32_723 : BitVec 32) :
    k1_off12 k1_t3 v1775 c0_i32_723 = ![0, 16 * k1_t3.val + 3, (v1775 + c0_i32_723).toNat] := by
  funext a
  match a with
  | ⟨0, _⟩ => rfl
  | ⟨1, _⟩ => exact (show ∀ k1_t3 : Fin k1_t3_loop.trips, k1_off12 k1_t3 0#32 0#32 1 = 16 * k1_t3.val + 3 from by decide +kernel) k1_t3
  | ⟨2, _⟩ => rfl

theorem k1_off13_form (k1_t3 : Fin k1_t3_loop.trips) (v1811 c0_i32_733 : BitVec 32) :
    k1_off13 k1_t3 v1811 c0_i32_733 = ![0, 16 * k1_t3.val + 4, (v1811 + c0_i32_733).toNat] := by
  funext a
  match a with
  | ⟨0, _⟩ => rfl
  | ⟨1, _⟩ => exact (show ∀ k1_t3 : Fin k1_t3_loop.trips, k1_off13 k1_t3 0#32 0#32 1 = 16 * k1_t3.val + 4 from by decide +kernel) k1_t3
  | ⟨2, _⟩ => rfl

theorem k1_off14_form (k1_t3 : Fin k1_t3_loop.trips) (v1847 c0_i32_742 : BitVec 32) :
    k1_off14 k1_t3 v1847 c0_i32_742 = ![0, 16 * k1_t3.val + 5, (v1847 + c0_i32_742).toNat] := by
  funext a
  match a with
  | ⟨0, _⟩ => rfl
  | ⟨1, _⟩ => exact (show ∀ k1_t3 : Fin k1_t3_loop.trips, k1_off14 k1_t3 0#32 0#32 1 = 16 * k1_t3.val + 5 from by decide +kernel) k1_t3
  | ⟨2, _⟩ => rfl

theorem k1_off15_form (k1_t3 : Fin k1_t3_loop.trips) (v1883 c0_i32_752 : BitVec 32) :
    k1_off15 k1_t3 v1883 c0_i32_752 = ![0, 16 * k1_t3.val + 6, (v1883 + c0_i32_752).toNat] := by
  funext a
  match a with
  | ⟨0, _⟩ => rfl
  | ⟨1, _⟩ => exact (show ∀ k1_t3 : Fin k1_t3_loop.trips, k1_off15 k1_t3 0#32 0#32 1 = 16 * k1_t3.val + 6 from by decide +kernel) k1_t3
  | ⟨2, _⟩ => rfl

theorem k1_off16_form (k1_t3 : Fin k1_t3_loop.trips) (v1919 c0_i32_762 : BitVec 32) :
    k1_off16 k1_t3 v1919 c0_i32_762 = ![0, 16 * k1_t3.val + 7, (v1919 + c0_i32_762).toNat] := by
  funext a
  match a with
  | ⟨0, _⟩ => rfl
  | ⟨1, _⟩ => exact (show ∀ k1_t3 : Fin k1_t3_loop.trips, k1_off16 k1_t3 0#32 0#32 1 = 16 * k1_t3.val + 7 from by decide +kernel) k1_t3
  | ⟨2, _⟩ => rfl

theorem k1_off17_form (k1_t3 : Fin k1_t3_loop.trips) (v1955 c0_i32_772 : BitVec 32) :
    k1_off17 k1_t3 v1955 c0_i32_772 = ![0, 16 * k1_t3.val + 8, (v1955 + c0_i32_772).toNat] := by
  funext a
  match a with
  | ⟨0, _⟩ => rfl
  | ⟨1, _⟩ => exact (show ∀ k1_t3 : Fin k1_t3_loop.trips, k1_off17 k1_t3 0#32 0#32 1 = 16 * k1_t3.val + 8 from by decide +kernel) k1_t3
  | ⟨2, _⟩ => rfl

theorem k1_off18_form (k1_t3 : Fin k1_t3_loop.trips) (v1991 c0_i32_781 : BitVec 32) :
    k1_off18 k1_t3 v1991 c0_i32_781 = ![0, 16 * k1_t3.val + 9, (v1991 + c0_i32_781).toNat] := by
  funext a
  match a with
  | ⟨0, _⟩ => rfl
  | ⟨1, _⟩ => exact (show ∀ k1_t3 : Fin k1_t3_loop.trips, k1_off18 k1_t3 0#32 0#32 1 = 16 * k1_t3.val + 9 from by decide +kernel) k1_t3
  | ⟨2, _⟩ => rfl

theorem k1_off19_form (k1_t3 : Fin k1_t3_loop.trips) (v2027 c0_i32_790 : BitVec 32) :
    k1_off19 k1_t3 v2027 c0_i32_790 = ![0, 16 * k1_t3.val + 10, (v2027 + c0_i32_790).toNat] := by
  funext a
  match a with
  | ⟨0, _⟩ => rfl
  | ⟨1, _⟩ => exact (show ∀ k1_t3 : Fin k1_t3_loop.trips, k1_off19 k1_t3 0#32 0#32 1 = 16 * k1_t3.val + 10 from by decide +kernel) k1_t3
  | ⟨2, _⟩ => rfl

theorem k1_off20_form (k1_t3 : Fin k1_t3_loop.trips) (v2063 c0_i32_799 : BitVec 32) :
    k1_off20 k1_t3 v2063 c0_i32_799 = ![0, 16 * k1_t3.val + 11, (v2063 + c0_i32_799).toNat] := by
  funext a
  match a with
  | ⟨0, _⟩ => rfl
  | ⟨1, _⟩ => exact (show ∀ k1_t3 : Fin k1_t3_loop.trips, k1_off20 k1_t3 0#32 0#32 1 = 16 * k1_t3.val + 11 from by decide +kernel) k1_t3
  | ⟨2, _⟩ => rfl

theorem k1_off21_form (k1_t3 : Fin k1_t3_loop.trips) (v2099 c0_i32_808 : BitVec 32) :
    k1_off21 k1_t3 v2099 c0_i32_808 = ![0, 16 * k1_t3.val + 12, (v2099 + c0_i32_808).toNat] := by
  funext a
  match a with
  | ⟨0, _⟩ => rfl
  | ⟨1, _⟩ => exact (show ∀ k1_t3 : Fin k1_t3_loop.trips, k1_off21 k1_t3 0#32 0#32 1 = 16 * k1_t3.val + 12 from by decide +kernel) k1_t3
  | ⟨2, _⟩ => rfl

theorem k1_off22_form (k1_t3 : Fin k1_t3_loop.trips) (v2135 c0_i32_817 : BitVec 32) :
    k1_off22 k1_t3 v2135 c0_i32_817 = ![0, 16 * k1_t3.val + 13, (v2135 + c0_i32_817).toNat] := by
  funext a
  match a with
  | ⟨0, _⟩ => rfl
  | ⟨1, _⟩ => exact (show ∀ k1_t3 : Fin k1_t3_loop.trips, k1_off22 k1_t3 0#32 0#32 1 = 16 * k1_t3.val + 13 from by decide +kernel) k1_t3
  | ⟨2, _⟩ => rfl

theorem k1_off23_form (k1_t3 : Fin k1_t3_loop.trips) (v2171 c0_i32_826 : BitVec 32) :
    k1_off23 k1_t3 v2171 c0_i32_826 = ![0, 16 * k1_t3.val + 14, (v2171 + c0_i32_826).toNat] := by
  funext a
  match a with
  | ⟨0, _⟩ => rfl
  | ⟨1, _⟩ => exact (show ∀ k1_t3 : Fin k1_t3_loop.trips, k1_off23 k1_t3 0#32 0#32 1 = 16 * k1_t3.val + 14 from by decide +kernel) k1_t3
  | ⟨2, _⟩ => rfl

theorem k1_off24_form (k1_t3 : Fin k1_t3_loop.trips) (v2207 c0_i32_835 : BitVec 32) :
    k1_off24 k1_t3 v2207 c0_i32_835 = ![0, 16 * k1_t3.val + 15, (v2207 + c0_i32_835).toNat] := by
  funext a
  match a with
  | ⟨0, _⟩ => rfl
  | ⟨1, _⟩ => exact (show ∀ k1_t3 : Fin k1_t3_loop.trips, k1_off24 k1_t3 0#32 0#32 1 = 16 * k1_t3.val + 15 from by decide +kernel) k1_t3
  | ⟨2, _⟩ => rfl

theorem k1_off26_form (v1456 c0_i32_605 : BitVec 32) :
    k1_off26 v1456 c0_i32_605 = ![0, 48, (v1456 + c0_i32_605).toNat] := by
  funext a
  match a with
  | ⟨0, _⟩ => rfl
  | ⟨1, _⟩ => exact rfl
  | ⟨2, _⟩ => rfl

theorem k1_off27_form (v1490 c0_i32_616 : BitVec 32) :
    k1_off27 v1490 c0_i32_616 = ![0, 49, (v1490 + c0_i32_616).toNat] := by
  funext a
  match a with
  | ⟨0, _⟩ => rfl
  | ⟨1, _⟩ => exact rfl
  | ⟨2, _⟩ => rfl

theorem k1_off36_form (k1_t4 : Fin k1_t4_loop.trips) (v1667 c0_i32_693 : BitVec 32) :
    k1_off36 k1_t4 v1667 c0_i32_693 = ![1, 16 * k1_t4.val + 0, (v1667 + c0_i32_693).toNat] := by
  funext a
  match a with
  | ⟨0, _⟩ => rfl
  | ⟨1, _⟩ => exact (show ∀ k1_t4 : Fin k1_t4_loop.trips, k1_off36 k1_t4 0#32 0#32 1 = 16 * k1_t4.val + 0 from by decide +kernel) k1_t4
  | ⟨2, _⟩ => rfl

theorem k1_off37_form (k1_t4 : Fin k1_t4_loop.trips) (v1703 c0_i32_703 : BitVec 32) :
    k1_off37 k1_t4 v1703 c0_i32_703 = ![1, 16 * k1_t4.val + 1, (v1703 + c0_i32_703).toNat] := by
  funext a
  match a with
  | ⟨0, _⟩ => rfl
  | ⟨1, _⟩ => exact (show ∀ k1_t4 : Fin k1_t4_loop.trips, k1_off37 k1_t4 0#32 0#32 1 = 16 * k1_t4.val + 1 from by decide +kernel) k1_t4
  | ⟨2, _⟩ => rfl

theorem k1_off38_form (k1_t4 : Fin k1_t4_loop.trips) (v1739 c0_i32_713 : BitVec 32) :
    k1_off38 k1_t4 v1739 c0_i32_713 = ![1, 16 * k1_t4.val + 2, (v1739 + c0_i32_713).toNat] := by
  funext a
  match a with
  | ⟨0, _⟩ => rfl
  | ⟨1, _⟩ => exact (show ∀ k1_t4 : Fin k1_t4_loop.trips, k1_off38 k1_t4 0#32 0#32 1 = 16 * k1_t4.val + 2 from by decide +kernel) k1_t4
  | ⟨2, _⟩ => rfl

theorem k1_off39_form (k1_t4 : Fin k1_t4_loop.trips) (v1775 c0_i32_723 : BitVec 32) :
    k1_off39 k1_t4 v1775 c0_i32_723 = ![1, 16 * k1_t4.val + 3, (v1775 + c0_i32_723).toNat] := by
  funext a
  match a with
  | ⟨0, _⟩ => rfl
  | ⟨1, _⟩ => exact (show ∀ k1_t4 : Fin k1_t4_loop.trips, k1_off39 k1_t4 0#32 0#32 1 = 16 * k1_t4.val + 3 from by decide +kernel) k1_t4
  | ⟨2, _⟩ => rfl

theorem k1_off40_form (k1_t4 : Fin k1_t4_loop.trips) (v1811 c0_i32_733 : BitVec 32) :
    k1_off40 k1_t4 v1811 c0_i32_733 = ![1, 16 * k1_t4.val + 4, (v1811 + c0_i32_733).toNat] := by
  funext a
  match a with
  | ⟨0, _⟩ => rfl
  | ⟨1, _⟩ => exact (show ∀ k1_t4 : Fin k1_t4_loop.trips, k1_off40 k1_t4 0#32 0#32 1 = 16 * k1_t4.val + 4 from by decide +kernel) k1_t4
  | ⟨2, _⟩ => rfl

theorem k1_off41_form (k1_t4 : Fin k1_t4_loop.trips) (v1847 c0_i32_742 : BitVec 32) :
    k1_off41 k1_t4 v1847 c0_i32_742 = ![1, 16 * k1_t4.val + 5, (v1847 + c0_i32_742).toNat] := by
  funext a
  match a with
  | ⟨0, _⟩ => rfl
  | ⟨1, _⟩ => exact (show ∀ k1_t4 : Fin k1_t4_loop.trips, k1_off41 k1_t4 0#32 0#32 1 = 16 * k1_t4.val + 5 from by decide +kernel) k1_t4
  | ⟨2, _⟩ => rfl

theorem k1_off42_form (k1_t4 : Fin k1_t4_loop.trips) (v1883 c0_i32_752 : BitVec 32) :
    k1_off42 k1_t4 v1883 c0_i32_752 = ![1, 16 * k1_t4.val + 6, (v1883 + c0_i32_752).toNat] := by
  funext a
  match a with
  | ⟨0, _⟩ => rfl
  | ⟨1, _⟩ => exact (show ∀ k1_t4 : Fin k1_t4_loop.trips, k1_off42 k1_t4 0#32 0#32 1 = 16 * k1_t4.val + 6 from by decide +kernel) k1_t4
  | ⟨2, _⟩ => rfl

theorem k1_off43_form (k1_t4 : Fin k1_t4_loop.trips) (v1919 c0_i32_762 : BitVec 32) :
    k1_off43 k1_t4 v1919 c0_i32_762 = ![1, 16 * k1_t4.val + 7, (v1919 + c0_i32_762).toNat] := by
  funext a
  match a with
  | ⟨0, _⟩ => rfl
  | ⟨1, _⟩ => exact (show ∀ k1_t4 : Fin k1_t4_loop.trips, k1_off43 k1_t4 0#32 0#32 1 = 16 * k1_t4.val + 7 from by decide +kernel) k1_t4
  | ⟨2, _⟩ => rfl

theorem k1_off44_form (k1_t4 : Fin k1_t4_loop.trips) (v1955 c0_i32_772 : BitVec 32) :
    k1_off44 k1_t4 v1955 c0_i32_772 = ![1, 16 * k1_t4.val + 8, (v1955 + c0_i32_772).toNat] := by
  funext a
  match a with
  | ⟨0, _⟩ => rfl
  | ⟨1, _⟩ => exact (show ∀ k1_t4 : Fin k1_t4_loop.trips, k1_off44 k1_t4 0#32 0#32 1 = 16 * k1_t4.val + 8 from by decide +kernel) k1_t4
  | ⟨2, _⟩ => rfl

theorem k1_off45_form (k1_t4 : Fin k1_t4_loop.trips) (v1991 c0_i32_781 : BitVec 32) :
    k1_off45 k1_t4 v1991 c0_i32_781 = ![1, 16 * k1_t4.val + 9, (v1991 + c0_i32_781).toNat] := by
  funext a
  match a with
  | ⟨0, _⟩ => rfl
  | ⟨1, _⟩ => exact (show ∀ k1_t4 : Fin k1_t4_loop.trips, k1_off45 k1_t4 0#32 0#32 1 = 16 * k1_t4.val + 9 from by decide +kernel) k1_t4
  | ⟨2, _⟩ => rfl

theorem k1_off46_form (k1_t4 : Fin k1_t4_loop.trips) (v2027 c0_i32_790 : BitVec 32) :
    k1_off46 k1_t4 v2027 c0_i32_790 = ![1, 16 * k1_t4.val + 10, (v2027 + c0_i32_790).toNat] := by
  funext a
  match a with
  | ⟨0, _⟩ => rfl
  | ⟨1, _⟩ => exact (show ∀ k1_t4 : Fin k1_t4_loop.trips, k1_off46 k1_t4 0#32 0#32 1 = 16 * k1_t4.val + 10 from by decide +kernel) k1_t4
  | ⟨2, _⟩ => rfl

theorem k1_off47_form (k1_t4 : Fin k1_t4_loop.trips) (v2063 c0_i32_799 : BitVec 32) :
    k1_off47 k1_t4 v2063 c0_i32_799 = ![1, 16 * k1_t4.val + 11, (v2063 + c0_i32_799).toNat] := by
  funext a
  match a with
  | ⟨0, _⟩ => rfl
  | ⟨1, _⟩ => exact (show ∀ k1_t4 : Fin k1_t4_loop.trips, k1_off47 k1_t4 0#32 0#32 1 = 16 * k1_t4.val + 11 from by decide +kernel) k1_t4
  | ⟨2, _⟩ => rfl

theorem k1_off48_form (k1_t4 : Fin k1_t4_loop.trips) (v2099 c0_i32_808 : BitVec 32) :
    k1_off48 k1_t4 v2099 c0_i32_808 = ![1, 16 * k1_t4.val + 12, (v2099 + c0_i32_808).toNat] := by
  funext a
  match a with
  | ⟨0, _⟩ => rfl
  | ⟨1, _⟩ => exact (show ∀ k1_t4 : Fin k1_t4_loop.trips, k1_off48 k1_t4 0#32 0#32 1 = 16 * k1_t4.val + 12 from by decide +kernel) k1_t4
  | ⟨2, _⟩ => rfl

theorem k1_off49_form (k1_t4 : Fin k1_t4_loop.trips) (v2135 c0_i32_817 : BitVec 32) :
    k1_off49 k1_t4 v2135 c0_i32_817 = ![1, 16 * k1_t4.val + 13, (v2135 + c0_i32_817).toNat] := by
  funext a
  match a with
  | ⟨0, _⟩ => rfl
  | ⟨1, _⟩ => exact (show ∀ k1_t4 : Fin k1_t4_loop.trips, k1_off49 k1_t4 0#32 0#32 1 = 16 * k1_t4.val + 13 from by decide +kernel) k1_t4
  | ⟨2, _⟩ => rfl

theorem k1_off50_form (k1_t4 : Fin k1_t4_loop.trips) (v2171 c0_i32_826 : BitVec 32) :
    k1_off50 k1_t4 v2171 c0_i32_826 = ![1, 16 * k1_t4.val + 14, (v2171 + c0_i32_826).toNat] := by
  funext a
  match a with
  | ⟨0, _⟩ => rfl
  | ⟨1, _⟩ => exact (show ∀ k1_t4 : Fin k1_t4_loop.trips, k1_off50 k1_t4 0#32 0#32 1 = 16 * k1_t4.val + 14 from by decide +kernel) k1_t4
  | ⟨2, _⟩ => rfl

theorem k1_off51_form (k1_t4 : Fin k1_t4_loop.trips) (v2207 c0_i32_835 : BitVec 32) :
    k1_off51 k1_t4 v2207 c0_i32_835 = ![1, 16 * k1_t4.val + 15, (v2207 + c0_i32_835).toNat] := by
  funext a
  match a with
  | ⟨0, _⟩ => rfl
  | ⟨1, _⟩ => exact (show ∀ k1_t4 : Fin k1_t4_loop.trips, k1_off51 k1_t4 0#32 0#32 1 = 16 * k1_t4.val + 15 from by decide +kernel) k1_t4
  | ⟨2, _⟩ => rfl

theorem k1_off53_form (v1572 c0_i32_658 : BitVec 32) :
    k1_off53 v1572 c0_i32_658 = ![1, 48, (v1572 + c0_i32_658).toNat] := by
  funext a
  match a with
  | ⟨0, _⟩ => rfl
  | ⟨1, _⟩ => exact rfl
  | ⟨2, _⟩ => rfl

theorem k1_off54_form (v1606 c0_i32_670 : BitVec 32) :
    k1_off54 v1606 c0_i32_670 = ![1, 49, (v1606 + c0_i32_670).toNat] := by
  funext a
  match a with
  | ⟨0, _⟩ => rfl
  | ⟨1, _⟩ => exact rfl
  | ⟨2, _⟩ => rfl

theorem k1_off66_form (k1_t6 : Fin k1_t6_loop.trips) (v1667 c0_i32_693 : BitVec 32) :
    k1_off66 k1_t6 v1667 c0_i32_693 = ![0, 16 * k1_t6.val + 0, (v1667 + c0_i32_693).toNat] := by
  funext a
  match a with
  | ⟨0, _⟩ => rfl
  | ⟨1, _⟩ => exact (show ∀ k1_t6 : Fin k1_t6_loop.trips, k1_off66 k1_t6 0#32 0#32 1 = 16 * k1_t6.val + 0 from by decide +kernel) k1_t6
  | ⟨2, _⟩ => rfl

theorem k1_off67_form (k1_t6 : Fin k1_t6_loop.trips) (v1703 c0_i32_703 : BitVec 32) :
    k1_off67 k1_t6 v1703 c0_i32_703 = ![0, 16 * k1_t6.val + 1, (v1703 + c0_i32_703).toNat] := by
  funext a
  match a with
  | ⟨0, _⟩ => rfl
  | ⟨1, _⟩ => exact (show ∀ k1_t6 : Fin k1_t6_loop.trips, k1_off67 k1_t6 0#32 0#32 1 = 16 * k1_t6.val + 1 from by decide +kernel) k1_t6
  | ⟨2, _⟩ => rfl

theorem k1_off68_form (k1_t6 : Fin k1_t6_loop.trips) (v1739 c0_i32_713 : BitVec 32) :
    k1_off68 k1_t6 v1739 c0_i32_713 = ![0, 16 * k1_t6.val + 2, (v1739 + c0_i32_713).toNat] := by
  funext a
  match a with
  | ⟨0, _⟩ => rfl
  | ⟨1, _⟩ => exact (show ∀ k1_t6 : Fin k1_t6_loop.trips, k1_off68 k1_t6 0#32 0#32 1 = 16 * k1_t6.val + 2 from by decide +kernel) k1_t6
  | ⟨2, _⟩ => rfl

theorem k1_off69_form (k1_t6 : Fin k1_t6_loop.trips) (v1775 c0_i32_723 : BitVec 32) :
    k1_off69 k1_t6 v1775 c0_i32_723 = ![0, 16 * k1_t6.val + 3, (v1775 + c0_i32_723).toNat] := by
  funext a
  match a with
  | ⟨0, _⟩ => rfl
  | ⟨1, _⟩ => exact (show ∀ k1_t6 : Fin k1_t6_loop.trips, k1_off69 k1_t6 0#32 0#32 1 = 16 * k1_t6.val + 3 from by decide +kernel) k1_t6
  | ⟨2, _⟩ => rfl

theorem k1_off70_form (k1_t6 : Fin k1_t6_loop.trips) (v1811 c0_i32_733 : BitVec 32) :
    k1_off70 k1_t6 v1811 c0_i32_733 = ![0, 16 * k1_t6.val + 4, (v1811 + c0_i32_733).toNat] := by
  funext a
  match a with
  | ⟨0, _⟩ => rfl
  | ⟨1, _⟩ => exact (show ∀ k1_t6 : Fin k1_t6_loop.trips, k1_off70 k1_t6 0#32 0#32 1 = 16 * k1_t6.val + 4 from by decide +kernel) k1_t6
  | ⟨2, _⟩ => rfl

theorem k1_off71_form (k1_t6 : Fin k1_t6_loop.trips) (v1847 c0_i32_742 : BitVec 32) :
    k1_off71 k1_t6 v1847 c0_i32_742 = ![0, 16 * k1_t6.val + 5, (v1847 + c0_i32_742).toNat] := by
  funext a
  match a with
  | ⟨0, _⟩ => rfl
  | ⟨1, _⟩ => exact (show ∀ k1_t6 : Fin k1_t6_loop.trips, k1_off71 k1_t6 0#32 0#32 1 = 16 * k1_t6.val + 5 from by decide +kernel) k1_t6
  | ⟨2, _⟩ => rfl

theorem k1_off72_form (k1_t6 : Fin k1_t6_loop.trips) (v1883 c0_i32_752 : BitVec 32) :
    k1_off72 k1_t6 v1883 c0_i32_752 = ![0, 16 * k1_t6.val + 6, (v1883 + c0_i32_752).toNat] := by
  funext a
  match a with
  | ⟨0, _⟩ => rfl
  | ⟨1, _⟩ => exact (show ∀ k1_t6 : Fin k1_t6_loop.trips, k1_off72 k1_t6 0#32 0#32 1 = 16 * k1_t6.val + 6 from by decide +kernel) k1_t6
  | ⟨2, _⟩ => rfl

theorem k1_off73_form (k1_t6 : Fin k1_t6_loop.trips) (v1919 c0_i32_762 : BitVec 32) :
    k1_off73 k1_t6 v1919 c0_i32_762 = ![0, 16 * k1_t6.val + 7, (v1919 + c0_i32_762).toNat] := by
  funext a
  match a with
  | ⟨0, _⟩ => rfl
  | ⟨1, _⟩ => exact (show ∀ k1_t6 : Fin k1_t6_loop.trips, k1_off73 k1_t6 0#32 0#32 1 = 16 * k1_t6.val + 7 from by decide +kernel) k1_t6
  | ⟨2, _⟩ => rfl

theorem k1_off74_form (k1_t6 : Fin k1_t6_loop.trips) (v1955 c0_i32_772 : BitVec 32) :
    k1_off74 k1_t6 v1955 c0_i32_772 = ![0, 16 * k1_t6.val + 8, (v1955 + c0_i32_772).toNat] := by
  funext a
  match a with
  | ⟨0, _⟩ => rfl
  | ⟨1, _⟩ => exact (show ∀ k1_t6 : Fin k1_t6_loop.trips, k1_off74 k1_t6 0#32 0#32 1 = 16 * k1_t6.val + 8 from by decide +kernel) k1_t6
  | ⟨2, _⟩ => rfl

theorem k1_off75_form (k1_t6 : Fin k1_t6_loop.trips) (v1991 c0_i32_781 : BitVec 32) :
    k1_off75 k1_t6 v1991 c0_i32_781 = ![0, 16 * k1_t6.val + 9, (v1991 + c0_i32_781).toNat] := by
  funext a
  match a with
  | ⟨0, _⟩ => rfl
  | ⟨1, _⟩ => exact (show ∀ k1_t6 : Fin k1_t6_loop.trips, k1_off75 k1_t6 0#32 0#32 1 = 16 * k1_t6.val + 9 from by decide +kernel) k1_t6
  | ⟨2, _⟩ => rfl

theorem k1_off76_form (k1_t6 : Fin k1_t6_loop.trips) (v2027 c0_i32_790 : BitVec 32) :
    k1_off76 k1_t6 v2027 c0_i32_790 = ![0, 16 * k1_t6.val + 10, (v2027 + c0_i32_790).toNat] := by
  funext a
  match a with
  | ⟨0, _⟩ => rfl
  | ⟨1, _⟩ => exact (show ∀ k1_t6 : Fin k1_t6_loop.trips, k1_off76 k1_t6 0#32 0#32 1 = 16 * k1_t6.val + 10 from by decide +kernel) k1_t6
  | ⟨2, _⟩ => rfl

theorem k1_off77_form (k1_t6 : Fin k1_t6_loop.trips) (v2063 c0_i32_799 : BitVec 32) :
    k1_off77 k1_t6 v2063 c0_i32_799 = ![0, 16 * k1_t6.val + 11, (v2063 + c0_i32_799).toNat] := by
  funext a
  match a with
  | ⟨0, _⟩ => rfl
  | ⟨1, _⟩ => exact (show ∀ k1_t6 : Fin k1_t6_loop.trips, k1_off77 k1_t6 0#32 0#32 1 = 16 * k1_t6.val + 11 from by decide +kernel) k1_t6
  | ⟨2, _⟩ => rfl

theorem k1_off78_form (k1_t6 : Fin k1_t6_loop.trips) (v2099 c0_i32_808 : BitVec 32) :
    k1_off78 k1_t6 v2099 c0_i32_808 = ![0, 16 * k1_t6.val + 12, (v2099 + c0_i32_808).toNat] := by
  funext a
  match a with
  | ⟨0, _⟩ => rfl
  | ⟨1, _⟩ => exact (show ∀ k1_t6 : Fin k1_t6_loop.trips, k1_off78 k1_t6 0#32 0#32 1 = 16 * k1_t6.val + 12 from by decide +kernel) k1_t6
  | ⟨2, _⟩ => rfl

theorem k1_off79_form (k1_t6 : Fin k1_t6_loop.trips) (v2135 c0_i32_817 : BitVec 32) :
    k1_off79 k1_t6 v2135 c0_i32_817 = ![0, 16 * k1_t6.val + 13, (v2135 + c0_i32_817).toNat] := by
  funext a
  match a with
  | ⟨0, _⟩ => rfl
  | ⟨1, _⟩ => exact (show ∀ k1_t6 : Fin k1_t6_loop.trips, k1_off79 k1_t6 0#32 0#32 1 = 16 * k1_t6.val + 13 from by decide +kernel) k1_t6
  | ⟨2, _⟩ => rfl

theorem k1_off80_form (k1_t6 : Fin k1_t6_loop.trips) (v2171 c0_i32_826 : BitVec 32) :
    k1_off80 k1_t6 v2171 c0_i32_826 = ![0, 16 * k1_t6.val + 14, (v2171 + c0_i32_826).toNat] := by
  funext a
  match a with
  | ⟨0, _⟩ => rfl
  | ⟨1, _⟩ => exact (show ∀ k1_t6 : Fin k1_t6_loop.trips, k1_off80 k1_t6 0#32 0#32 1 = 16 * k1_t6.val + 14 from by decide +kernel) k1_t6
  | ⟨2, _⟩ => rfl

theorem k1_off81_form (k1_t6 : Fin k1_t6_loop.trips) (v2207 c0_i32_835 : BitVec 32) :
    k1_off81 k1_t6 v2207 c0_i32_835 = ![0, 16 * k1_t6.val + 15, (v2207 + c0_i32_835).toNat] := by
  funext a
  match a with
  | ⟨0, _⟩ => rfl
  | ⟨1, _⟩ => exact (show ∀ k1_t6 : Fin k1_t6_loop.trips, k1_off81 k1_t6 0#32 0#32 1 = 16 * k1_t6.val + 15 from by decide +kernel) k1_t6
  | ⟨2, _⟩ => rfl

theorem k1_off83_form (v1456 c0_i32_605 : BitVec 32) :
    k1_off83 v1456 c0_i32_605 = ![0, 48, (v1456 + c0_i32_605).toNat] := by
  funext a
  match a with
  | ⟨0, _⟩ => rfl
  | ⟨1, _⟩ => exact rfl
  | ⟨2, _⟩ => rfl

theorem k1_off84_form (v1490 c0_i32_616 : BitVec 32) :
    k1_off84 v1490 c0_i32_616 = ![0, 49, (v1490 + c0_i32_616).toNat] := by
  funext a
  match a with
  | ⟨0, _⟩ => rfl
  | ⟨1, _⟩ => exact rfl
  | ⟨2, _⟩ => rfl

theorem k1_off93_form (k1_t7 : Fin k1_t7_loop.trips) (v1667 c0_i32_693 : BitVec 32) :
    k1_off93 k1_t7 v1667 c0_i32_693 = ![1, 16 * k1_t7.val + 0, (v1667 + c0_i32_693).toNat] := by
  funext a
  match a with
  | ⟨0, _⟩ => rfl
  | ⟨1, _⟩ => exact (show ∀ k1_t7 : Fin k1_t7_loop.trips, k1_off93 k1_t7 0#32 0#32 1 = 16 * k1_t7.val + 0 from by decide +kernel) k1_t7
  | ⟨2, _⟩ => rfl

theorem k1_off94_form (k1_t7 : Fin k1_t7_loop.trips) (v1703 c0_i32_703 : BitVec 32) :
    k1_off94 k1_t7 v1703 c0_i32_703 = ![1, 16 * k1_t7.val + 1, (v1703 + c0_i32_703).toNat] := by
  funext a
  match a with
  | ⟨0, _⟩ => rfl
  | ⟨1, _⟩ => exact (show ∀ k1_t7 : Fin k1_t7_loop.trips, k1_off94 k1_t7 0#32 0#32 1 = 16 * k1_t7.val + 1 from by decide +kernel) k1_t7
  | ⟨2, _⟩ => rfl

theorem k1_off95_form (k1_t7 : Fin k1_t7_loop.trips) (v1739 c0_i32_713 : BitVec 32) :
    k1_off95 k1_t7 v1739 c0_i32_713 = ![1, 16 * k1_t7.val + 2, (v1739 + c0_i32_713).toNat] := by
  funext a
  match a with
  | ⟨0, _⟩ => rfl
  | ⟨1, _⟩ => exact (show ∀ k1_t7 : Fin k1_t7_loop.trips, k1_off95 k1_t7 0#32 0#32 1 = 16 * k1_t7.val + 2 from by decide +kernel) k1_t7
  | ⟨2, _⟩ => rfl

theorem k1_off96_form (k1_t7 : Fin k1_t7_loop.trips) (v1775 c0_i32_723 : BitVec 32) :
    k1_off96 k1_t7 v1775 c0_i32_723 = ![1, 16 * k1_t7.val + 3, (v1775 + c0_i32_723).toNat] := by
  funext a
  match a with
  | ⟨0, _⟩ => rfl
  | ⟨1, _⟩ => exact (show ∀ k1_t7 : Fin k1_t7_loop.trips, k1_off96 k1_t7 0#32 0#32 1 = 16 * k1_t7.val + 3 from by decide +kernel) k1_t7
  | ⟨2, _⟩ => rfl

theorem k1_off97_form (k1_t7 : Fin k1_t7_loop.trips) (v1811 c0_i32_733 : BitVec 32) :
    k1_off97 k1_t7 v1811 c0_i32_733 = ![1, 16 * k1_t7.val + 4, (v1811 + c0_i32_733).toNat] := by
  funext a
  match a with
  | ⟨0, _⟩ => rfl
  | ⟨1, _⟩ => exact (show ∀ k1_t7 : Fin k1_t7_loop.trips, k1_off97 k1_t7 0#32 0#32 1 = 16 * k1_t7.val + 4 from by decide +kernel) k1_t7
  | ⟨2, _⟩ => rfl

theorem k1_off98_form (k1_t7 : Fin k1_t7_loop.trips) (v1847 c0_i32_742 : BitVec 32) :
    k1_off98 k1_t7 v1847 c0_i32_742 = ![1, 16 * k1_t7.val + 5, (v1847 + c0_i32_742).toNat] := by
  funext a
  match a with
  | ⟨0, _⟩ => rfl
  | ⟨1, _⟩ => exact (show ∀ k1_t7 : Fin k1_t7_loop.trips, k1_off98 k1_t7 0#32 0#32 1 = 16 * k1_t7.val + 5 from by decide +kernel) k1_t7
  | ⟨2, _⟩ => rfl

theorem k1_off99_form (k1_t7 : Fin k1_t7_loop.trips) (v1883 c0_i32_752 : BitVec 32) :
    k1_off99 k1_t7 v1883 c0_i32_752 = ![1, 16 * k1_t7.val + 6, (v1883 + c0_i32_752).toNat] := by
  funext a
  match a with
  | ⟨0, _⟩ => rfl
  | ⟨1, _⟩ => exact (show ∀ k1_t7 : Fin k1_t7_loop.trips, k1_off99 k1_t7 0#32 0#32 1 = 16 * k1_t7.val + 6 from by decide +kernel) k1_t7
  | ⟨2, _⟩ => rfl

theorem k1_off100_form (k1_t7 : Fin k1_t7_loop.trips) (v1919 c0_i32_762 : BitVec 32) :
    k1_off100 k1_t7 v1919 c0_i32_762 = ![1, 16 * k1_t7.val + 7, (v1919 + c0_i32_762).toNat] := by
  funext a
  match a with
  | ⟨0, _⟩ => rfl
  | ⟨1, _⟩ => exact (show ∀ k1_t7 : Fin k1_t7_loop.trips, k1_off100 k1_t7 0#32 0#32 1 = 16 * k1_t7.val + 7 from by decide +kernel) k1_t7
  | ⟨2, _⟩ => rfl

theorem k1_off101_form (k1_t7 : Fin k1_t7_loop.trips) (v1955 c0_i32_772 : BitVec 32) :
    k1_off101 k1_t7 v1955 c0_i32_772 = ![1, 16 * k1_t7.val + 8, (v1955 + c0_i32_772).toNat] := by
  funext a
  match a with
  | ⟨0, _⟩ => rfl
  | ⟨1, _⟩ => exact (show ∀ k1_t7 : Fin k1_t7_loop.trips, k1_off101 k1_t7 0#32 0#32 1 = 16 * k1_t7.val + 8 from by decide +kernel) k1_t7
  | ⟨2, _⟩ => rfl

theorem k1_off102_form (k1_t7 : Fin k1_t7_loop.trips) (v1991 c0_i32_781 : BitVec 32) :
    k1_off102 k1_t7 v1991 c0_i32_781 = ![1, 16 * k1_t7.val + 9, (v1991 + c0_i32_781).toNat] := by
  funext a
  match a with
  | ⟨0, _⟩ => rfl
  | ⟨1, _⟩ => exact (show ∀ k1_t7 : Fin k1_t7_loop.trips, k1_off102 k1_t7 0#32 0#32 1 = 16 * k1_t7.val + 9 from by decide +kernel) k1_t7
  | ⟨2, _⟩ => rfl

theorem k1_off103_form (k1_t7 : Fin k1_t7_loop.trips) (v2027 c0_i32_790 : BitVec 32) :
    k1_off103 k1_t7 v2027 c0_i32_790 = ![1, 16 * k1_t7.val + 10, (v2027 + c0_i32_790).toNat] := by
  funext a
  match a with
  | ⟨0, _⟩ => rfl
  | ⟨1, _⟩ => exact (show ∀ k1_t7 : Fin k1_t7_loop.trips, k1_off103 k1_t7 0#32 0#32 1 = 16 * k1_t7.val + 10 from by decide +kernel) k1_t7
  | ⟨2, _⟩ => rfl

theorem k1_off104_form (k1_t7 : Fin k1_t7_loop.trips) (v2063 c0_i32_799 : BitVec 32) :
    k1_off104 k1_t7 v2063 c0_i32_799 = ![1, 16 * k1_t7.val + 11, (v2063 + c0_i32_799).toNat] := by
  funext a
  match a with
  | ⟨0, _⟩ => rfl
  | ⟨1, _⟩ => exact (show ∀ k1_t7 : Fin k1_t7_loop.trips, k1_off104 k1_t7 0#32 0#32 1 = 16 * k1_t7.val + 11 from by decide +kernel) k1_t7
  | ⟨2, _⟩ => rfl

theorem k1_off105_form (k1_t7 : Fin k1_t7_loop.trips) (v2099 c0_i32_808 : BitVec 32) :
    k1_off105 k1_t7 v2099 c0_i32_808 = ![1, 16 * k1_t7.val + 12, (v2099 + c0_i32_808).toNat] := by
  funext a
  match a with
  | ⟨0, _⟩ => rfl
  | ⟨1, _⟩ => exact (show ∀ k1_t7 : Fin k1_t7_loop.trips, k1_off105 k1_t7 0#32 0#32 1 = 16 * k1_t7.val + 12 from by decide +kernel) k1_t7
  | ⟨2, _⟩ => rfl

theorem k1_off106_form (k1_t7 : Fin k1_t7_loop.trips) (v2135 c0_i32_817 : BitVec 32) :
    k1_off106 k1_t7 v2135 c0_i32_817 = ![1, 16 * k1_t7.val + 13, (v2135 + c0_i32_817).toNat] := by
  funext a
  match a with
  | ⟨0, _⟩ => rfl
  | ⟨1, _⟩ => exact (show ∀ k1_t7 : Fin k1_t7_loop.trips, k1_off106 k1_t7 0#32 0#32 1 = 16 * k1_t7.val + 13 from by decide +kernel) k1_t7
  | ⟨2, _⟩ => rfl

theorem k1_off107_form (k1_t7 : Fin k1_t7_loop.trips) (v2171 c0_i32_826 : BitVec 32) :
    k1_off107 k1_t7 v2171 c0_i32_826 = ![1, 16 * k1_t7.val + 14, (v2171 + c0_i32_826).toNat] := by
  funext a
  match a with
  | ⟨0, _⟩ => rfl
  | ⟨1, _⟩ => exact (show ∀ k1_t7 : Fin k1_t7_loop.trips, k1_off107 k1_t7 0#32 0#32 1 = 16 * k1_t7.val + 14 from by decide +kernel) k1_t7
  | ⟨2, _⟩ => rfl

theorem k1_off108_form (k1_t7 : Fin k1_t7_loop.trips) (v2207 c0_i32_835 : BitVec 32) :
    k1_off108 k1_t7 v2207 c0_i32_835 = ![1, 16 * k1_t7.val + 15, (v2207 + c0_i32_835).toNat] := by
  funext a
  match a with
  | ⟨0, _⟩ => rfl
  | ⟨1, _⟩ => exact (show ∀ k1_t7 : Fin k1_t7_loop.trips, k1_off108 k1_t7 0#32 0#32 1 = 16 * k1_t7.val + 15 from by decide +kernel) k1_t7
  | ⟨2, _⟩ => rfl

theorem k1_off110_form (v1572 c0_i32_658 : BitVec 32) :
    k1_off110 v1572 c0_i32_658 = ![1, 48, (v1572 + c0_i32_658).toNat] := by
  funext a
  match a with
  | ⟨0, _⟩ => rfl
  | ⟨1, _⟩ => exact rfl
  | ⟨2, _⟩ => rfl

theorem k1_off111_form (v1606 c0_i32_670 : BitVec 32) :
    k1_off111 v1606 c0_i32_670 = ![1, 49, (v1606 + c0_i32_670).toNat] := by
  funext a
  match a with
  | ⟨0, _⟩ => rfl
  | ⟨1, _⟩ => exact rfl
  | ⟨2, _⟩ => rfl

end Offs

/-! ## The facts the loops carry -/

variable (fl : IVec Spec.SFlat 32) (tab : FVec F Spec.STab .f32)

/-- Word `n` of block `b` of worker `w`: word `8192 w + 1024 b + n` of the flat index array. -/
def blkWord (w b n : Nat) : BitVec 32 := Spec.flatAt fl (8192 * w + 1024 * b + n)

/-- Half `h` of the row-number scratch holds the table rows of block `b`'s 1024 words; -/
def TixV (w b h : Nat) (g1 : Buf (Elt F) ((sTix : Memref sig .scVector .vmem S2048 .i32).view.loc (thr d L))) : Prop :=
  ∀ (n : Nat) (hn : n < 1024) (hh : h < 2), g1 (ix1 (⟨1024 * h + n, by omega⟩ : Fin 2048)) = Spec.trow (blkWord fl w b n)

/-- half `h` of the column-offset scratch their column offsets. -/
def RvV (w b h : Nat) (g2 : Buf (Elt F) ((sRv : Memref sig .scVector .vmem S2048 .i32).view.loc (thr d L))) : Prop :=
  ∀ (n : Nat) (hn : n < 1024) (hh : h < 2), g2 (ix1 (⟨1024 * h + n, by omega⟩ : Fin 2048)) = Spec.tcol (blkWord fl w b n)

/-- Slot `sl` of the rows scratch holds the fifty table rows of bag `g` of block `b`: row `j` is the table's row for
    the bag's `j`-th word. -/
def RowsV (w b g : Nat) (sl : Fin 2) (r : Buf (Elt F) ((sRows : Memref sig .scVector .vmem S2x50x128 .f32).view.loc (thr d L))) : Prop :=
  ∀ (j : Fin 50) (c : Fin 128), r (ix3 sl j c) = Spec.tabAt tab (Spec.trow (blkWord fl w b (64 * g + j.val))).toNat c.val

/-- Half `ib` of the write-back scratch holds, in its rows below `n`, the sums of bags `0 … n - 1` of block `b`. -/
def WbV (w b : Nat) (ib : Fin 2) (n : Nat) (wb : Buf (Elt F) ((sWb : Memref sig .scVector .vmem S2x16x64 .f32).view.loc (thr d L))) : Prop :=
  ∀ (g : Fin 16) (c : Fin 64), g.val < n → wb (ix3 ib g c) = Spec.bagPartial fl tab (128 * w + 16 * b + g.val) c.val 50

/-- The bag's words, as the sums' definition reads them. -/
theorem blkWord_eq (w b g j : Nat) : blkWord fl w b (64 * g + j) = Spec.flatAt fl (64 * (128 * w + 16 * b + g) + j) := by
  unfold blkWord; congr 1; omega

/-! ## The rows scratch after a landing -/

variable (hn : S50.numel = 50)

/-- A landing in slot 0 of the fifty rows a list names, the list's words being the table rows of bag `g`'s words, leaves
    slot 0 holding that bag's fifty table rows — whatever the scratch held. -/
theorem RowsV_landing0 (w b g : Nat)
    (g1 : Buf (Elt F) ((sTix : Memref sig .scVector .vmem S2048 .i32).view.loc (thr d L)))
    (o : Fin 1 → Nat) (ho : ∀ a, o a + S50.size a ≤ S2048.size a)
    (hwords : ∀ (j : Fin 50) (h : o 0 + j.val < 2048), g1 (ix1 ⟨o 0 + j.val, h⟩) = Spec.trow (blkWord fl w b (64 * g + j.val)))
    (hin : ∀ x, ((listM o ho).view.read (Elt F) g1 x).toNat < S507904x128.size (gathers_S507904x128_S50x128).axis)
    (r0 : Buf (Elt F) ((sRows : Memref sig .scVector .vmem S2x50x128 .f32).view.loc (thr d L))) :
    RowsV d L fl tab w b g 0 (View.write (Elt F) (h0M).view r0
      (SparseCore.gatherPayload gathers_S507904x128_S50x128 (tVM.view.read (Elt F) tab)
        (SparseCore.rows ((listM o ho).view.read (Elt F) g1) hn hin)) Finset.univ) := by
  intro j c
  have hb : o 0 + j.val < 2048 := by have h1 := ho 0; have h2 := j.isLt; change o 0 + 50 ≤ 2048 at h1; omega
  have hw := hwords j hb
  have hlt := hin (ix1 j)
  rw [list_read d L g1 o ho j hb, hw] at hlt
  rw [write_h0_same, gather_read, TileMath.tabAt_eq tab _ _ hlt c.isLt]
  congr 1
  funext a
  match a with
  | ⟨0, _⟩ => exact Fin.ext (by show ((listM o ho).view.read (Elt F) g1 (ix1 j)).toNat = _; rw [list_read d L g1 o ho j hb, hw])
  | ⟨1, _⟩ => rfl

/-- The same in slot 1. -/
theorem RowsV_landing1 (w b g : Nat)
    (g1 : Buf (Elt F) ((sTix : Memref sig .scVector .vmem S2048 .i32).view.loc (thr d L)))
    (o : Fin 1 → Nat) (ho : ∀ a, o a + S50.size a ≤ S2048.size a)
    (hwords : ∀ (j : Fin 50) (h : o 0 + j.val < 2048), g1 (ix1 ⟨o 0 + j.val, h⟩) = Spec.trow (blkWord fl w b (64 * g + j.val)))
    (hin : ∀ x, ((listM o ho).view.read (Elt F) g1 x).toNat < S507904x128.size (gathers_S507904x128_S50x128).axis)
    (r0 : Buf (Elt F) ((sRows : Memref sig .scVector .vmem S2x50x128 .f32).view.loc (thr d L))) :
    RowsV d L fl tab w b g 1 (View.write (Elt F) (h1M).view r0
      (SparseCore.gatherPayload gathers_S507904x128_S50x128 (tVM.view.read (Elt F) tab)
        (SparseCore.rows ((listM o ho).view.read (Elt F) g1) hn hin)) Finset.univ) := by
  intro j c
  have hb : o 0 + j.val < 2048 := by have h1 := ho 0; have h2 := j.isLt; change o 0 + 50 ≤ 2048 at h1; omega
  have hw := hwords j hb
  have hlt := hin (ix1 j)
  rw [list_read d L g1 o ho j hb, hw] at hlt
  rw [write_h1_same, gather_read, TileMath.tabAt_eq tab _ _ hlt c.isLt]
  congr 1
  funext a
  match a with
  | ⟨0, _⟩ => exact Fin.ext (by show ((listM o ho).view.read (Elt F) g1 (ix1 j)).toNat = _; rw [list_read d L g1 o ho j hb, hw])
  | ⟨1, _⟩ => rfl

/-- A landing in one slot leaves the other slot's rows. -/
theorem RowsV_keep1 (w b g : Nat) (r0 : Buf (Elt F) ((sRows : Memref sig .scVector .vmem S2x50x128 .f32).view.loc (thr d L)))
    (pay : S50x128.Idx → Elt F .f32) (h : RowsV d L fl tab w b g 1 r0) :
    RowsV d L fl tab w b g 1 (View.write (Elt F) (h0M).view r0 pay Finset.univ) := fun j c => by
  rw [write_h0_other]; exact h j c
theorem RowsV_keep0 (w b g : Nat) (r0 : Buf (Elt F) ((sRows : Memref sig .scVector .vmem S2x50x128 .f32).view.loc (thr d L)))
    (pay : S50x128.Idx → Elt F .f32) (h : RowsV d L fl tab w b g 0 r0) :
    RowsV d L fl tab w b g 0 (View.write (Elt F) (h1M).view r0 pay Finset.univ) := fun j c => by
  rw [write_h1_other]; exact h j c

/-- The words of the list at offset `1024 h + 64 g` of the row-number scratch, from what half `h` of the scratch holds. -/
theorem words_of_TixV (w b h g : Nat) (hh : h < 2) (hg : g < 16)
    (g1 : Buf (Elt F) ((sTix : Memref sig .scVector .vmem S2048 .i32).view.loc (thr d L)))
    (hT : TixV d L fl w b h g1) (o : Fin 1 → Nat) (ho0 : o 0 = 1024 * h + 64 * g) :
    ∀ (j : Fin 50) (hb : o 0 + j.val < 2048), g1 (ix1 ⟨o 0 + j.val, hb⟩) = Spec.trow (blkWord fl w b (64 * g + j.val)) := by
  intro j hb
  have hj := j.isLt
  have := hT (64 * g + j.val) (by omega) hh
  rw [← this]
  congr 2
  exact Fin.ext (by show o 0 + j.val = 1024 * h + (64 * g + j.val); omega)

/-- Bag 16 of a block is bag 0 of the next. -/
theorem blkWord_next (w b n : Nat) : blkWord fl w b (64 * 16 + n) = blkWord fl w (b + 1) (64 * 0 + n) := by
  unfold blkWord; congr 1; omega

end Tile

end Cert.Proof.BagB
end
-- ==== Proof.TileFactsB.lean ====
/-
  What one vector subcore's scratches hold at the top of a trip of a block's pair loop, as pure facts of their contents.

  Before trip `k` of EVEN block `b` (lists in half 0 of the row-number scratch, sums into slot 0 of the write-back scratch):
  half 0 of the row-number and column-offset scratches hold block `b`'s row numbers and column offsets, half 1 block
  `b + 1`'s (converted before the loop); the gather in flight lands bag `2 k`'s rows in slot 0 (at `k = 8`: the next block's
  first bag); rows `0 ..< 2 k` of slot 0 of the write-back scratch hold their bags' sums. ODD blocks mirror it, with no
  gather left in flight after the last block.
-/
import proofs.«203835_g19404662243951_cont_8to1_399_35_alg».proof.Proof.TilePreB
import proofs.«203835_g19404662243951_cont_8to1_399_35_alg».proof.Proof.PayB
import proofs.«203835_g19404662243951_cont_8to1_399_35_alg».proof.Proof.TileValB
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Tile

variable (d : Dev nD) (L : grid1.Coords) (fl : IVec Spec.SFlat 32) (tab : FVec F Spec.STab .f32)

/-- Before trip `k` of even block `b`'s pair loop. -/
def EvenV (b k : Nat) (r : Buf (Elt F) ((sRows : Memref sig .scVector .vmem S2x50x128 .f32).view.loc (thr d L)))
    (g1 : Buf (Elt F) ((sTix : Memref sig .scVector .vmem S2048 .i32).view.loc (thr d L)))
    (g2 : Buf (Elt F) ((sRv : Memref sig .scVector .vmem S2048 .i32).view.loc (thr d L)))
    (wb : Buf (Elt F) ((sWb : Memref sig .scVector .vmem S2x16x64 .f32).view.loc (thr d L))) : Prop :=
  TixV d L fl (wL L).val b 0 g1 ∧ RvV d L fl (wL L).val b 0 g2 ∧ TixV d L fl (wL L).val (b + 1) 1 g1 ∧ RvV d L fl (wL L).val (b + 1) 1 g2
    ∧ RowsV d L fl tab (wL L).val b (2 * k) 0 r ∧ WbV d L fl tab (wL L).val b 0 (2 * k) wb

/-- Before trip `k` of odd block `b`'s pair loop. -/
def OddV (b k : Nat) (r : Buf (Elt F) ((sRows : Memref sig .scVector .vmem S2x50x128 .f32).view.loc (thr d L)))
    (g1 : Buf (Elt F) ((sTix : Memref sig .scVector .vmem S2048 .i32).view.loc (thr d L)))
    (g2 : Buf (Elt F) ((sRv : Memref sig .scVector .vmem S2048 .i32).view.loc (thr d L)))
    (wb : Buf (Elt F) ((sWb : Memref sig .scVector .vmem S2x16x64 .f32).view.loc (thr d L))) : Prop :=
  TixV d L fl (wL L).val b 1 g1 ∧ RvV d L fl (wL L).val b 1 g2
    ∧ (b < 7 → TixV d L fl (wL L).val (b + 1) 0 g1 ∧ RvV d L fl (wL L).val (b + 1) 0 g2)
    ∧ (k < 8 ∨ b < 7 → RowsV d L fl tab (wL L).val b (2 * k) 0 r) ∧ WbV d L fl tab (wL L).val b 1 (2 * k) wb

end Tile

end Cert.Proof.BagB
end
-- ==== Proof.TileInvB.lean ====
/-
  What an even block's pair loop carries from trip to trip on a vector subcore.

  Bag `2 k`'s fifty table rows are gathered into slot 0 of the rows scratch while bag `2 k - 1`'s are summed out of slot 1, and
  the other way round: at the top of trip `k` the gather of bag `2 k` is in flight on the first gather semaphore, holding slot
  0, the bag's list and the table's elements; everything else of the scratches is in hand (the write-back scratch but for its
  slot 1, whose copy out may still be in flight), and the second gather semaphore is at zero.
-/
import proofs.«203835_g19404662243951_cont_8to1_399_35_alg».proof.Proof.TilePreB
import proofs.«203835_g19404662243951_cont_8to1_399_35_alg».proof.Proof.PayB
import proofs.«203835_g19404662243951_cont_8to1_399_35_alg».proof.Proof.TileFactsB
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

/-- Before trip `k` of an even block's pair loop: the gather of bag `2 k`'s rows into slot 0 is in flight on the first
    gather semaphore, holding slot 0, the bag's list and the table's elements; the rest of the table, of the rows scratch and
    of the list scratch are in hand, with the column-offset scratch whole and the write-back scratch but for its slot 1
    (whose copy out to the sums may still be in flight); the second gather semaphore is at zero. -/
def inv0 (fl : IVec Spec.SFlat 32) (qt : PosShare TreeShare) (tab : FVec F Spec.STab .f32) (O : CellTallies nD τ sig (HIx 1))
    (W0 : Waits sig (HIx 1)) (b : Nat) (k : Nat) (_ : PUnit) : sProp 𝕄 :=
  iprop(Transfers.MayWaits (thr d L) (none : HIx 1) O
    ∗ ∃ (r : Buf (Elt F) ((sRows : Memref sig .scVector .vmem S2x50x128 .f32).view.loc (thr d L)))
        (g1 : Buf (Elt F) ((sTix : Memref sig .scVector .vmem S2048 .i32).view.loc (thr d L)))
        (g2 : Buf (Elt F) ((sRv : Memref sig .scVector .vmem S2048 .i32).view.loc (thr d L)))
        (wb : Buf (Elt F) ((sWb : Memref sig .scVector .vmem S2x16x64 .f32).view.loc (thr d L)))
        (o : Fin 1 → Nat) (ho : ∀ a, o a + S50.size a ≤ S2048.size a),
      ⌜TixB d L g1 ∧ RvB d L g2 ∧ o = lo k ∧ EvenV d L fl tab b k r g1 g2 wb⌝
      ∗ Transfers.Flight countersEmb (thr d L) (SemLoc.dma cc1_scratch5.sem) (default : HIx 1) 204800
          iprop((((sRows : Memref sig .scVector .vmem S2x50x128 .f32).view.loc (thr d L) ↦[(h0M).view.set]{fullShare} r)
              ∗ ((sTix : Memref sig .scVector .vmem S2048 .i32).view.loc (thr d L) ↦[(listM o ho).view.set]{fullShare} g1))
            ∗ ((tV : Memref sig .scVector .hbm S507904x128 .f32).view.loc (thr d L) ↦[(tVM).view.set]{qt} tab))
      ∗ ((sTix : Memref sig .scVector .vmem S2048 .i32).view.loc (thr d L) ↦[Finset.univ \ (listM o ho).view.set]{fullShare} g1)
      ∗ ((tV : Memref sig .scVector .hbm S507904x128 .f32).view.loc (thr d L) ↦[Finset.univ \ (tVM).view.set]{qt} tab)
      ∗ ((sRows : Memref sig .scVector .vmem S2x50x128 .f32).view.loc (thr d L) ↦[Finset.univ \ (h0M).view.set]{fullShare} r)
      ∗ ((sRv : Memref sig .scVector .vmem S2048 .i32).view.loc (thr d L) ↦{fullShare} g2)
      ∗ ((sWb : Memref sig .scVector .vmem S2x16x64 .f32).view.loc (thr d L) ↦[Finset.univ \ (slot1M).view.set]{fullShare} wb)
      ∗ semVal (thr d L, SemLoc.dma cc1_scratch6.sem) 0
      ∗ ∃ W', ⌜∀ p ∈ W', p ∈ W0 ∨ p.2 = none⌝ ∗ owes (thr d L) O W')

end Tile

end Cert.Proof.BagB
end
-- ==== Proof.TileInv1B.lean ====
/-
  What the pair loop of an ODD block of one vector subcore's task carries from trip to trip.

  Odd block `b` reads its lists from the second half of the row-number scratch: at the top of trip `k` the gather of bag `2 k`
  is in flight on the first gather semaphore with the list at word `1024 + 128 k`; its sums go to slot 1 of the write-back
  scratch, slot 0's copy out being possibly still in flight. The last trip starts the gather of the NEXT block's first bag
  (the list at word 0) — unless the block is the task's last (`b = 7`), when after the last trip nothing is in flight: both
  gather semaphores are at zero and the scratches and the table's share are whole.
-/
import proofs.«203835_g19404662243951_cont_8to1_399_35_alg».proof.Proof.TilePreB
import proofs.«203835_g19404662243951_cont_8to1_399_35_alg».proof.Proof.PayB
import proofs.«203835_g19404662243951_cont_8to1_399_35_alg».proof.Proof.TileFactsB
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

/-- The offset of list `2 k` of an odd block, as one word of offsets: in the second half of the row-number scratch for the
    block's eight trips, and the first word of the scratch (the next block's first list) after the last. -/
def lo1 (k : Nat) : Fin 1 → Nat := if k < 8 then ![1024 + 128 * k] else ![0]
theorem lo1_inb (k : Nat) : ∀ a, lo1 k a + S50.size a ≤ S2048.size a := by
  intro a; obtain rfl : a = 0 := Subsingleton.elim _ _
  unfold lo1
  split
  · show 1024 + 128 * k + 50 ≤ 2048
    omega
  · show 0 + 50 ≤ 2048
    omega

/-- Before trip `k` of odd block `b`'s pair loop with a gather in flight: as for an even block, the list at `lo1 k`, the
    write-back scratch held but for its slot 0 (whose copy out to the sums may still be in flight). -/
def invF (fl : IVec Spec.SFlat 32) (qt : PosShare TreeShare) (tab : FVec F Spec.STab .f32) (O : CellTallies nD τ sig (HIx 1))
    (W0 : Waits sig (HIx 1)) (b : Nat) (k : Nat) (_ : PUnit) : sProp 𝕄 :=
  iprop(Transfers.MayWaits (thr d L) (none : HIx 1) O
    ∗ ∃ (r : Buf (Elt F) ((sRows : Memref sig .scVector .vmem S2x50x128 .f32).view.loc (thr d L)))
        (g1 : Buf (Elt F) ((sTix : Memref sig .scVector .vmem S2048 .i32).view.loc (thr d L)))
        (g2 : Buf (Elt F) ((sRv : Memref sig .scVector .vmem S2048 .i32).view.loc (thr d L)))
        (wb : Buf (Elt F) ((sWb : Memref sig .scVector .vmem S2x16x64 .f32).view.loc (thr d L)))
        (o : Fin 1 → Nat) (ho : ∀ a, o a + S50.size a ≤ S2048.size a),
      ⌜TixB d L g1 ∧ RvB d L g2 ∧ o = lo1 k ∧ OddV d L fl tab b k r g1 g2 wb⌝
      ∗ Transfers.Flight countersEmb (thr d L) (SemLoc.dma cc1_scratch5.sem) (default : HIx 1) 204800
          iprop((((sRows : Memref sig .scVector .vmem S2x50x128 .f32).view.loc (thr d L) ↦[(h0M).view.set]{fullShare} r)
              ∗ ((sTix : Memref sig .scVector .vmem S2048 .i32).view.loc (thr d L) ↦[(listM o ho).view.set]{fullShare} g1))
            ∗ ((tV : Memref sig .scVector .hbm S507904x128 .f32).view.loc (thr d L) ↦[(tVM).view.set]{qt} tab))
      ∗ ((sTix : Memref sig .scVector .vmem S2048 .i32).view.loc (thr d L) ↦[Finset.univ \ (listM o ho).view.set]{fullShare} g1)
      ∗ ((tV : Memref sig .scVector .hbm S507904x128 .f32).view.loc (thr d L) ↦[Finset.univ \ (tVM).view.set]{qt} tab)
      ∗ ((sRows : Memref sig .scVector .vmem S2x50x128 .f32).view.loc (thr d L) ↦[Finset.univ \ (h0M).view.set]{fullShare} r)
      ∗ ((sRv : Memref sig .scVector .vmem S2048 .i32).view.loc (thr d L) ↦{fullShare} g2)
      ∗ ((sWb : Memref sig .scVector .vmem S2x16x64 .f32).view.loc (thr d L) ↦[Finset.univ \ (slot0M).view.set]{fullShare} wb)
      ∗ semVal (thr d L, SemLoc.dma cc1_scratch6.sem) 0
      ∗ ∃ W', ⌜∀ p ∈ W', p ∈ W0 ∨ p.2 = none⌝ ∗ owes (thr d L) O W')

/-- After the last trip of the task's last block: nothing in flight, both gather semaphores at zero, the scratches (the
    write-back scratch but for its slot 0) and the table's share whole. -/
def invL (fl : IVec Spec.SFlat 32) (qt : PosShare TreeShare) (tab : FVec F Spec.STab .f32) (O : CellTallies nD τ sig (HIx 1))
    (W0 : Waits sig (HIx 1)) (b : Nat) (_ : PUnit) : sProp 𝕄 :=
  iprop(Transfers.MayWaits (thr d L) (none : HIx 1) O
    ∗ ∃ (r : Buf (Elt F) ((sRows : Memref sig .scVector .vmem S2x50x128 .f32).view.loc (thr d L)))
        (g1 : Buf (Elt F) ((sTix : Memref sig .scVector .vmem S2048 .i32).view.loc (thr d L)))
        (g2 : Buf (Elt F) ((sRv : Memref sig .scVector .vmem S2048 .i32).view.loc (thr d L)))
        (wb : Buf (Elt F) ((sWb : Memref sig .scVector .vmem S2x16x64 .f32).view.loc (thr d L))),
      ⌜TixB d L g1 ∧ RvB d L g2 ∧ OddV d L fl tab b 8 r g1 g2 wb⌝
      ∗ semVal (thr d L, SemLoc.dma cc1_scratch5.sem) 0
      ∗ ((sTix : Memref sig .scVector .vmem S2048 .i32).view.loc (thr d L) ↦{fullShare} g1)
      ∗ ((tV : Memref sig .scVector .hbm S507904x128 .f32).view.loc (thr d L) ↦{qt} tab)
      ∗ ((sRows : Memref sig .scVector .vmem S2x50x128 .f32).view.loc (thr d L) ↦{fullShare} r)
      ∗ ((sRv : Memref sig .scVector .vmem S2048 .i32).view.loc (thr d L) ↦{fullShare} g2)
      ∗ ((sWb : Memref sig .scVector .vmem S2x16x64 .f32).view.loc (thr d L) ↦[Finset.univ \ (slot0M).view.set]{fullShare} wb)
      ∗ semVal (thr d L, SemLoc.dma cc1_scratch6.sem) 0
      ∗ ∃ W', ⌜∀ p ∈ W', p ∈ W0 ∨ p.2 = none⌝ ∗ owes (thr d L) O W')

/-- Before trip `k` of odd block `b`: a gather in flight, but for after the last trip of the last block (`b = 7`). -/
def inv1 (fl : IVec Spec.SFlat 32) (qt : PosShare TreeShare) (tab : FVec F Spec.STab .f32) (O : CellTallies nD τ sig (HIx 1))
    (W0 : Waits sig (HIx 1)) (b : Nat) (k : Nat) (u : PUnit) : sProp 𝕄 :=
  if k < 8 ∨ b < 7 then invF d L fl qt tab O W0 b k u else invL d L fl qt tab O W0 b u

theorem inv1_flight (fl : IVec Spec.SFlat 32) (qt : PosShare TreeShare) (tab : FVec F Spec.STab .f32) (O : CellTallies nD τ sig (HIx 1))
    (W0 : Waits sig (HIx 1)) (b k : Nat) (h : k < 8 ∨ b < 7) : inv1 d L fl qt tab O W0 b k = invF d L fl qt tab O W0 b k :=
  funext fun _ => if_pos h
theorem inv1_last (fl : IVec Spec.SFlat 32) (qt : PosShare TreeShare) (tab : FVec F Spec.STab .f32) (O : CellTallies nD τ sig (HIx 1))
    (W0 : Waits sig (HIx 1)) (b k : Nat) (h : ¬ (k < 8 ∨ b < 7)) : inv1 d L fl qt tab O W0 b k = invL d L fl qt tab O W0 b :=
  funext fun _ => if_neg h

theorem trips5 : k1_t5_loop.trips = 8 := by decide
theorem cond9_lt : ∀ k : Fin k1_t5_loop.trips, k.val < 7 → k1_cond9 k = 1#1 := by decide
theorem cond9_ge : ∀ k : Fin k1_t5_loop.trips, ¬ k.val < 7 → ¬ k1_cond9 k = 1#1 := by decide
theorem cond10_lt : ∀ (t : Fin k1_t1_loop.trips) (k : Fin k1_t5_loop.trips), k.val < 7 → ¬ k1_cond10 t k = 1#1 := by decide
theorem cond10_ge_lt : ∀ (t : Fin k1_t1_loop.trips) (k : Fin k1_t5_loop.trips), ¬ k.val < 7 → t.val < 3 → k1_cond10 t k = 1#1 := by decide
theorem cond10_ge_ge : ∀ (t : Fin k1_t1_loop.trips) (k : Fin k1_t5_loop.trips), ¬ k.val < 7 → ¬ t.val < 3 → ¬ k1_cond10 t k = 1#1 := by decide

end Tile

end Cert.Proof.BagB
end
-- ==== Proof.TileSlotsB.lean ====
/-
  The write-back scratch's two slots: slot `s` is the elements `(s, g, c)`. The two are disjoint, a slot and the rest of
  the scratch but the other slot join to the scratch but the other slot, and what is known of a slot's sums is not touched by
  the other slot's contents.
-/
import proofs.«203835_g19404662243951_cont_8to1_399_35_alg».proof.Proof.TileValB

noncomputable section

namespace Cert.Proof.BagB
open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode

variable {F : FTy → Type} [FloatOps F]

local notation "𝕄" => MT nD τ sig (HIx 1) (Elt F) ℕ UU ℕ

section Slots

variable (d : Dev nD) (L : grid1.Coords)

omit [FloatOps F] in
theorem set_slot0M : ((slot0M).view.set : Finset (Idx ((sWb : Memref sig .scVector .vmem S2x16x64 .f32).view.loc (thr d L))))
    = (Rect.unit (s := S2x16x64) ![0, 0, 0] S1x16x64.size inb_S2x16x64_S1x16x64_0_0_0).set := by
  simp only [Memref.view_squeeze, View.set_reshape, Memref.view_slice, Memref.view_whole, View.set_slice_whole]
omit [FloatOps F] in
theorem set_slot1M : ((slot1M).view.set : Finset (Idx ((sWb : Memref sig .scVector .vmem S2x16x64 .f32).view.loc (thr d L))))
    = (Rect.unit (s := S2x16x64) ![1, 0, 0] S1x16x64.size inb_S2x16x64_S1x16x64_1_0_0).set := by
  simp only [Memref.view_squeeze, View.set_reshape, Memref.view_slice, Memref.view_whole, View.set_slice_whole]

omit [FloatOps F] in
/-- Slot 0 and slot 1 share no element. -/
theorem slots_disjoint :
    Disjoint ((slot0M).view.set : Finset (Idx ((sWb : Memref sig .scVector .vmem S2x16x64 .f32).view.loc (thr d L)))) (slot1M).view.set := by
  rw [set_slot0M, set_slot1M]
  exact Rect.unit_disjoint 0 (Or.inl (by decide))

omit [FloatOps F] in
theorem mem_slot0M (i : Idx ((sWb : Memref sig .scVector .vmem S2x16x64 .f32).view.loc (thr d L))) :
    i ∈ ((slot0M).view.set : Finset (Idx ((sWb : Memref sig .scVector .vmem S2x16x64 .f32).view.loc (thr d L)))) ↔ (i 0).val = 0 := by
  rw [set_slot0M, Rect.mem_set_unit]
  constructor
  · intro h; have := h 0; simp at this; omega
  · intro h a
    have h0 : (i 0).val < 2 := (i 0).isLt
    have h1 : (i 1).val < 16 := (i 1).isLt
    have h2 : (i 2).val < 64 := (i 2).isLt
    match a with
    | ⟨0, _⟩ => exact ⟨Nat.zero_le _, by show (i 0).val < 0 + 1; omega⟩
    | ⟨1, _⟩ => exact ⟨Nat.zero_le _, by show (i 1).val < 0 + 16; omega⟩
    | ⟨2, _⟩ => exact ⟨Nat.zero_le _, by show (i 2).val < 0 + 64; omega⟩
omit [FloatOps F] in
theorem mem_slot1M (i : Idx ((sWb : Memref sig .scVector .vmem S2x16x64 .f32).view.loc (thr d L))) :
    i ∈ ((slot1M).view.set : Finset (Idx ((sWb : Memref sig .scVector .vmem S2x16x64 .f32).view.loc (thr d L)))) ↔ (i 0).val = 1 := by
  rw [set_slot1M, Rect.mem_set_unit]
  constructor
  · intro h; have := h 0; simp at this; omega
  · intro h a
    have h0 : (i 0).val < 2 := (i 0).isLt
    have h1 : (i 1).val < 16 := (i 1).isLt
    have h2 : (i 2).val < 64 := (i 2).isLt
    match a with
    | ⟨0, _⟩ => exact ⟨by show 1 ≤ (i 0).val; omega, by show (i 0).val < 1 + 1; omega⟩
    | ⟨1, _⟩ => exact ⟨Nat.zero_le _, by show (i 1).val < 0 + 16; omega⟩
    | ⟨2, _⟩ => exact ⟨Nat.zero_le _, by show (i 2).val < 0 + 64; omega⟩

omit [FloatOps F] in
/-- Slot 0 at `fa` and the scratch but both slots at `fr` are the scratch but slot 1, slot 0's elements at `fa`. -/
theorem wb_join_a (fa fr : Buf (Elt F) ((sWb : Memref sig .scVector .vmem S2x16x64 .f32).view.loc (thr d L))) :
    iprop(((sWb : Memref sig .scVector .vmem S2x16x64 .f32).view.loc (thr d L) ↦[(slot0M).view.set]{fullShare} fa)
        ∗ ((sWb : Memref sig .scVector .vmem S2x16x64 .f32).view.loc (thr d L) ↦[(Finset.univ \ (slot0M).view.set) \ (slot1M).view.set]{fullShare} fr))
      ⊢ ((sWb : Memref sig .scVector .vmem S2x16x64 .f32).view.loc (thr d L) ↦[Finset.univ \ (slot1M).view.set]{fullShare}
          ((slot0M).view.set.piecewise fa fr) : sProp 𝕄) := by
  rw [sdiff_right_comm]
  exact pointsTo_join_subset (fun i hi => Finset.mem_sdiff.mpr ⟨Finset.mem_univ _, Finset.disjoint_left.mp slots_disjoint hi⟩)

omit [FloatOps F] in
/-- The mirror: slot 1 at `fa` and the scratch but both slots at `fr` are the scratch but slot 0. -/
theorem wb_join_b (fa fr : Buf (Elt F) ((sWb : Memref sig .scVector .vmem S2x16x64 .f32).view.loc (thr d L))) :
    iprop(((sWb : Memref sig .scVector .vmem S2x16x64 .f32).view.loc (thr d L) ↦[(slot1M).view.set]{fullShare} fa)
        ∗ ((sWb : Memref sig .scVector .vmem S2x16x64 .f32).view.loc (thr d L) ↦[(Finset.univ \ (slot1M).view.set) \ (slot0M).view.set]{fullShare} fr))
      ⊢ ((sWb : Memref sig .scVector .vmem S2x16x64 .f32).view.loc (thr d L) ↦[Finset.univ \ (slot0M).view.set]{fullShare}
          ((slot1M).view.set.piecewise fa fr) : sProp 𝕄) := by
  rw [sdiff_right_comm]
  exact pointsTo_join_subset (fun i hi => Finset.mem_sdiff.mpr ⟨Finset.mem_univ _, Finset.disjoint_right.mp slots_disjoint hi⟩)

variable (fl : IVec Spec.SFlat 32) (tab : FVec F Spec.STab .f32)

/-- What is known of slot 0's sums is kept when slot 0's elements are taken from `fa`; -/
theorem WbV_piecewise0_keep (w b n : Nat) (fa fr : Buf (Elt F) ((sWb : Memref sig .scVector .vmem S2x16x64 .f32).view.loc (thr d L)))
    (h : WbV d L fl tab w b 0 n fa) : WbV d L fl tab w b 0 n ((slot0M).view.set.piecewise fa fr) := by
  intro g c hg
  rw [Finset.piecewise_eq_of_mem _ _ _ ((mem_slot0M d L _).mpr rfl)]
  exact h g c hg
/-- what is known of slot 1's is kept when only slot 0's elements change. -/
theorem WbV_piecewise0_other (w b n : Nat) (fa fr : Buf (Elt F) ((sWb : Memref sig .scVector .vmem S2x16x64 .f32).view.loc (thr d L)))
    (h : WbV d L fl tab w b 1 n fr) : WbV d L fl tab w b 1 n ((slot0M).view.set.piecewise fa fr) := by
  intro g c hg
  rw [Finset.piecewise_eq_of_notMem _ _ _ (fun hm => absurd ((mem_slot0M d L _).mp hm) (by show ¬ ((1 : Fin 2).val = 0); decide))]
  exact h g c hg
/-- The mirrors for slot 1. -/
theorem WbV_piecewise1_keep (w b n : Nat) (fa fr : Buf (Elt F) ((sWb : Memref sig .scVector .vmem S2x16x64 .f32).view.loc (thr d L)))
    (h : WbV d L fl tab w b 1 n fa) : WbV d L fl tab w b 1 n ((slot1M).view.set.piecewise fa fr) := by
  intro g c hg
  rw [Finset.piecewise_eq_of_mem _ _ _ ((mem_slot1M d L _).mpr rfl)]
  exact h g c hg
theorem WbV_piecewise1_other (w b n : Nat) (fa fr : Buf (Elt F) ((sWb : Memref sig .scVector .vmem S2x16x64 .f32).view.loc (thr d L)))
    (h : WbV d L fl tab w b 0 n fr) : WbV d L fl tab w b 0 n ((slot1M).view.set.piecewise fa fr) := by
  intro g c hg
  rw [Finset.piecewise_eq_of_notMem _ _ _ (fun hm => absurd ((mem_slot1M d L _).mp hm) (by show ¬ ((0 : Fin 2).val = 1); decide))]
  exact h g c hg

end Slots

end Cert.Proof.BagB
end
-- ==== Proof.TileLandB.lean ====
/-
  The write-backs' landing.  A trip of the outer loop copies the two halves of the write-back scratch into the
  trip's two blocks of sixteen rows of the sums.  Entry `(g, c)` of half `ib` is entry `(ib, g, c)` of the scratch;
  entry `(g, c)` of block `2 t + r` of worker `w` is entry `(128 w + 16 (2 t + r) + g, c)` of the sums' array.  So
  where the half holds the sums of the block's sixteen bags, the block after the landing holds, at each of its
  elements, the bag sums' own entry: the block is held at the bag sums.
-/
import proofs.«203835_g19404662243951_cont_8to1_399_35_alg».proof.Proof.TileOutB
import proofs.«203835_g19404662243951_cont_8to1_399_35_alg».proof.Proof.TileAbbrevB
import proofs.«203835_g19404662243951_cont_8to1_399_35_alg».proof.Proof.TileValB

noncomputable section

namespace Cert.Proof.BagB
open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Tile

variable (d : Dev nD) (L : grid1.Coords)

/-! ## Where the slots and the blocks sit -/

omit [FloatOps F] d L in
/-- Entry `(g, c)` of half 0 of the write-back scratch is entry `(0, g, c)` of the scratch; -/
theorem slot0M_emb (g : Fin 16) (c : Fin 64) : (slot0M).view.emb (ix2 g c) = ix3 (0 : Fin 2) g c := by
  show (Rect.unit (s := S2x16x64) ![0, 0, 0] S1x16x64.size inb_S2x16x64_S1x16x64_0_0_0).emb
    (Shape.reshapeEquiv squeezes_S1x16x64_S16x64.numel_eq (ix2 g c)) = _
  rw [reshapeEquiv_ix2_1ab]
  funext a; apply Fin.ext
  match a with
  | ⟨0, _⟩ => rfl
  | ⟨1, _⟩ => show 0 + 1 * g.val = g.val; omega
  | ⟨2, _⟩ => show 0 + 1 * c.val = c.val; omega

omit [FloatOps F] d L in
/-- of half 1, entry `(1, g, c)`. -/
theorem slot1M_emb (g : Fin 16) (c : Fin 64) : (slot1M).view.emb (ix2 g c) = ix3 (1 : Fin 2) g c := by
  show (Rect.unit (s := S2x16x64) ![1, 0, 0] S1x16x64.size inb_S2x16x64_S1x16x64_1_0_0).emb
    (Shape.reshapeEquiv squeezes_S1x16x64_S16x64.numel_eq (ix2 g c)) = _
  rw [reshapeEquiv_ix2_1ab]
  funext a; apply Fin.ext
  match a with
  | ⟨0, _⟩ => rfl
  | ⟨1, _⟩ => show 0 + 1 * g.val = g.val; omega
  | ⟨2, _⟩ => show 0 + 1 * c.val = c.val; omega

omit [FloatOps F] d L in
/-- A row of a worker's even block is a row of the sums. -/
theorem row0_lt (L : grid1.Coords) (t : Fin k1_t1_loop.trips) (g : Fin 16) : 128 * (wL L).val + 16 * (2 * t.val) + g.val < 4096 := by
  have := (wL L).isLt; have := two_mul_lt t; have := g.isLt; omega
omit [FloatOps F] d L in
theorem row1_lt (L : grid1.Coords) (t : Fin k1_t1_loop.trips) (g : Fin 16) : 128 * (wL L).val + 16 * (2 * t.val + 1) + g.val < 4096 := by
  have := (wL L).isLt; have := two_mul_succ_lt t; have := g.isLt; omega

omit [FloatOps F] d in
/-- Entry `(g, c)` of the even block of trip `t` is entry `(128 w + 16 (2 t) + g, c)` of the sums; -/
theorem oBlkM0_emb (t : Fin k1_t1_loop.trips) (g : Fin 16) (c : Fin 64) :
    (oBlkM0 L t).view.emb (ix2 g c) = ix2 (⟨128 * (wL L).val + 16 * (2 * t.val) + g.val, row0_lt L t g⟩ : Fin 4096) c := by
  funext a; apply Fin.ext
  match a with
  | ⟨0, _⟩ =>
    show (k1_off59 L t 0#32) 0 + 1 * g.val = 128 * (wL L).val + 16 * (2 * t.val) + g.val
    rw [show k1_off59 L t 0#32 = _ from k1_off59_eq L t 0, wL_val]
    simp only [Matrix.cons_val_zero]
    show 256 * (L 1).val + 128 * (L 0).val + 32 * t.val + 16 * 0 + 1 * g.val = _
    omega
  | ⟨1, _⟩ =>
    show (k1_off59 L t 0#32) 1 + 1 * c.val = c.val
    rw [show k1_off59 L t 0#32 = _ from k1_off59_eq L t 0]
    simp only [Matrix.cons_val_one, Matrix.cons_val_zero]
    omega

omit [FloatOps F] d in
/-- of the odd block, entry `(128 w + 16 (2 t + 1) + g, c)`. -/
theorem oBlkM1_emb (t : Fin k1_t1_loop.trips) (g : Fin 16) (c : Fin 64) :
    (oBlkM1 L t).view.emb (ix2 g c) = ix2 (⟨128 * (wL L).val + 16 * (2 * t.val + 1) + g.val, row1_lt L t g⟩ : Fin 4096) c := by
  funext a; apply Fin.ext
  match a with
  | ⟨0, _⟩ =>
    show (k1_off59 L t 1#32) 0 + 1 * g.val = 128 * (wL L).val + 16 * (2 * t.val + 1) + g.val
    rw [show k1_off59 L t 1#32 = _ from k1_off59_eq L t 1, wL_val]
    simp only [Matrix.cons_val_zero]
    show 256 * (L 1).val + 128 * (L 0).val + 32 * t.val + 16 * 1 + 1 * g.val = _
    omega
  | ⟨1, _⟩ =>
    show (k1_off59 L t 1#32) 1 + 1 * c.val = c.val
    rw [show k1_off59 L t 1#32 = _ from k1_off59_eq L t 1]
    simp only [Matrix.cons_val_one, Matrix.cons_val_zero]
    omega

/-! ## The blocks after the landing -/

variable (fl : IVec Spec.SFlat 32) (tab : FVec F Spec.STab .f32)

/-- After half 0 of the write-back scratch, holding the sums of the sixteen bags of block `2 t`, has landed in the
    even block of trip `t`, the block is held at the bag sums. -/
theorem out_vals0 (t : Fin k1_t1_loop.trips) (fb : Buf (Elt F) (oLoc d))
    (wbc : Buf (Elt F) ((sWb : Memref sig .scVector .vmem S2x16x64 .f32).view.loc (thr d L)))
    (pay : (Rect.whole S16x64).shape.Idx → Elt F .f32) (hpay : pay = (slot0M).view.read (Elt F) wbc)
    (hW : WbV d L fl tab (wL L).val (2 * t.val) 0 16 wbc) :
    ((oBlkM0 L t).view.loc (thr d L) ↦[(oBlkM0 L t).view.set]{fullShare}
        (oBlkM0 L t).view.writes (Elt F) fb [⟨Rect.whole S16x64, pay⟩] : sProp 𝕄)
      = oLoc d ↦[blockSet (blkNo (wL L) ⟨2 * t.val, two_mul_lt t⟩)]{fullShare} (Spec.bagSums fl tab) := by
  rw [pts_oBlkM0]
  refine pointsTo_congr fun i hi => ?_
  rw [← set_oBlkM0] at hi
  obtain ⟨y, -, rfl⟩ := Finset.mem_map.mp hi
  obtain ⟨g, c, rfl⟩ : ∃ (g : Fin 16) (c : Fin 64), y = ix2 g c := ⟨y 0, y 1, ix2_eta y⟩
  have hl : (oBlkM0 L t).view.writes (Elt F) fb [⟨Rect.whole S16x64, pay⟩] ((oBlkM0 L t).view.emb (ix2 g c)) = pay (ix2 g c) := by
    have h := View.read_writes_cons_emb (oBlkM0 L t).view fb (Rect.whole S16x64) pay [] (ix2 g c)
    rw [Rect.emb_whole_apply, View.read_apply, cast_eq] at h
    exact h
  rw [hl, hpay, View.read_apply, cast_eq, slot0M_emb, hW g c g.isLt, oBlkM0_emb]
  rfl

/-- The same of half 1 and the odd block, block `2 t + 1`. -/
theorem out_vals1 (t : Fin k1_t1_loop.trips) (fb : Buf (Elt F) (oLoc d))
    (wbc : Buf (Elt F) ((sWb : Memref sig .scVector .vmem S2x16x64 .f32).view.loc (thr d L)))
    (pay : (Rect.whole S16x64).shape.Idx → Elt F .f32) (hpay : pay = (slot1M).view.read (Elt F) wbc)
    (hW : WbV d L fl tab (wL L).val (2 * t.val + 1) 1 16 wbc) :
    ((oBlkM1 L t).view.loc (thr d L) ↦[(oBlkM1 L t).view.set]{fullShare}
        (oBlkM1 L t).view.writes (Elt F) fb [⟨Rect.whole S16x64, pay⟩] : sProp 𝕄)
      = oLoc d ↦[blockSet (blkNo (wL L) ⟨2 * t.val + 1, two_mul_succ_lt t⟩)]{fullShare} (Spec.bagSums fl tab) := by
  rw [pts_oBlkM1]
  refine pointsTo_congr fun i hi => ?_
  rw [← set_oBlkM1] at hi
  obtain ⟨y, -, rfl⟩ := Finset.mem_map.mp hi
  obtain ⟨g, c, rfl⟩ : ∃ (g : Fin 16) (c : Fin 64), y = ix2 g c := ⟨y 0, y 1, ix2_eta y⟩
  have hl : (oBlkM1 L t).view.writes (Elt F) fb [⟨Rect.whole S16x64, pay⟩] ((oBlkM1 L t).view.emb (ix2 g c)) = pay (ix2 g c) := by
    have h := View.read_writes_cons_emb (oBlkM1 L t).view fb (Rect.whole S16x64) pay [] (ix2 g c)
    rw [Rect.emb_whole_apply, View.read_apply, cast_eq] at h
    exact h
  rw [hl, hpay, View.read_apply, cast_eq, slot1M_emb, hW g c g.isLt, oBlkM1_emb]
  rfl

end Tile

end Cert.Proof.BagB
end
-- ==== Proof.TileGlueB.lean ====
/-
  Between block passes: what one pair loop leaves is what the next one needs of the scratches the index conversion does not
  rewrite — the other half's row numbers and column offsets, and the rows of the next block's first bag, whose words are
  the words after the block's sixteenth bag. And the bounds the indexed copies and the printed checks ask follow from the
  exact contents of the two halves.
-/
import proofs.«203835_g19404662243951_cont_8to1_399_35_alg».proof.Proof.TileFactsB

noncomputable section

namespace Cert.Proof.BagB
open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F]

section Glue

variable (d : Dev nD) (L : grid1.Coords) (fl : IVec Spec.SFlat 32) (tab : FVec F Spec.STab .f32)

omit [FloatOps F] in
/-- A word of the flat index array read at a natural position is a vocabulary index (zero outside the array). -/
theorem blkWord_le (hfl : ∀ n, (fl n).toNat ≤ 999999) (w b n : Nat) : (blkWord fl w b n).toNat ≤ 999999 := by
  unfold blkWord Spec.flatAt
  split
  · exact hfl _
  · decide

omit [FloatOps F] in
/-- Both halves of the row-number scratch holding table rows of vocabulary indices, every word of it names a row of the table. -/
theorem TixB_of_TixV (w b b' : Nat) (g1 : Buf (Elt F) ((sTix : Memref sig .scVector .vmem S2048 .i32).view.loc (thr d L)))
    (hfl : ∀ n, (fl n).toNat ≤ 999999) (h0 : TixV d L fl w b 0 g1) (h1 : TixV d L fl w b' 1 g1) : TixB d L g1 := by
  intro i
  have hi : (i 0).val < 2048 := (i 0).isLt
  by_cases hlt : (i 0).val < 1024
  · have e : i = ix1 (⟨1024 * 0 + (i 0).val, by omega⟩ : Fin 2048) :=
      funext fun a => by match a with | ⟨0, _⟩ => exact Fin.ext (by show (i 0).val = 1024 * 0 + (i 0).val; omega)
    rw [e, h0 (i 0).val hlt (by decide)]
    exact TileMath.trow_lt _ (blkWord_le fl hfl _ _ _)
  · have e : i = ix1 (⟨1024 * 1 + ((i 0).val - 1024), by omega⟩ : Fin 2048) :=
      funext fun a => by match a with | ⟨0, _⟩ => exact Fin.ext (by show (i 0).val = 1024 * 1 + ((i 0).val - 1024); omega)
    rw [e, h1 ((i 0).val - 1024) (by omega) (by decide)]
    exact TileMath.trow_lt _ (blkWord_le fl hfl _ _ _)

omit [FloatOps F] in
/-- Both halves of the column-offset scratch holding column offsets, every word of it is 0 or 64. -/
theorem RvB_of_RvV (w b b' : Nat) (g2 : Buf (Elt F) ((sRv : Memref sig .scVector .vmem S2048 .i32).view.loc (thr d L)))
    (h0 : RvV d L fl w b 0 g2) (h1 : RvV d L fl w b' 1 g2) : RvB d L g2 := by
  intro i
  have hi : (i 0).val < 2048 := (i 0).isLt
  by_cases hlt : (i 0).val < 1024
  · have e : i = ix1 (⟨1024 * 0 + (i 0).val, by omega⟩ : Fin 2048) :=
      funext fun a => by match a with | ⟨0, _⟩ => exact Fin.ext (by show (i 0).val = 1024 * 0 + (i 0).val; omega)
    rw [e, h0 (i 0).val hlt (by decide)]
    exact TileMath.tcol_cases _
  · have e : i = ix1 (⟨1024 * 1 + ((i 0).val - 1024), by omega⟩ : Fin 2048) :=
      funext fun a => by match a with | ⟨0, _⟩ => exact Fin.ext (by show (i 0).val = 1024 * 1 + ((i 0).val - 1024); omega)
    rw [e, h1 ((i 0).val - 1024) (by omega) (by decide)]
    exact TileMath.tcol_cases _

/-- The rows after a block's sixteenth bag are the next block's first bag's. -/
theorem RowsV_next (w b : Nat) (r : Buf (Elt F) ((sRows : Memref sig .scVector .vmem S2x50x128 .f32).view.loc (thr d L)))
    (h : RowsV d L fl tab w b 16 0 r) : RowsV d L fl tab w (b + 1) 0 0 r := by
  intro j c
  rw [h j c, blkWord_next]

/-- Nothing is claimed of a write-back slot before its first sum. -/
theorem WbV_zero (w b : Nat) (ib : Fin 2) (wb : Buf (Elt F) ((sWb : Memref sig .scVector .vmem S2x16x64 .f32).view.loc (thr d L))) :
    WbV d L fl tab w b ib 0 wb := fun g _ hg => absurd hg (Nat.not_lt_zero _)

/-- What an even block's loop leaves for the odd block after it. -/
theorem even_to_odd (e : Nat) (r : Buf (Elt F) ((sRows : Memref sig .scVector .vmem S2x50x128 .f32).view.loc (thr d L)))
    (g1 : Buf (Elt F) ((sTix : Memref sig .scVector .vmem S2048 .i32).view.loc (thr d L)))
    (g2 : Buf (Elt F) ((sRv : Memref sig .scVector .vmem S2048 .i32).view.loc (thr d L)))
    (wb : Buf (Elt F) ((sWb : Memref sig .scVector .vmem S2x16x64 .f32).view.loc (thr d L)))
    (h : EvenV d L fl tab e 8 r g1 g2 wb) :
    TixV d L fl (wL L).val (e + 1) 1 g1 ∧ RvV d L fl (wL L).val (e + 1) 1 g2 ∧ RowsV d L fl tab (wL L).val (e + 1) 0 0 r := by
  obtain ⟨-, -, hT, hR, hRows, -⟩ := h
  exact ⟨hT, hR, RowsV_next d L fl tab _ _ r hRows⟩

/-- What an odd block's loop leaves for the even block after it (there is one after every odd block but the last). -/
theorem odd_to_even (o : Nat) (ho : o < 7) (r : Buf (Elt F) ((sRows : Memref sig .scVector .vmem S2x50x128 .f32).view.loc (thr d L)))
    (g1 : Buf (Elt F) ((sTix : Memref sig .scVector .vmem S2048 .i32).view.loc (thr d L)))
    (g2 : Buf (Elt F) ((sRv : Memref sig .scVector .vmem S2048 .i32).view.loc (thr d L)))
    (wb : Buf (Elt F) ((sWb : Memref sig .scVector .vmem S2x16x64 .f32).view.loc (thr d L)))
    (h : OddV d L fl tab o 8 r g1 g2 wb) :
    TixV d L fl (wL L).val (o + 1) 0 g1 ∧ RvV d L fl (wL L).val (o + 1) 0 g2 ∧ RowsV d L fl tab (wL L).val (o + 1) 0 0 r := by
  obtain ⟨-, -, hnext, hRows, -⟩ := h
  obtain ⟨hT, hR⟩ := hnext ho
  exact ⟨hT, hR, RowsV_next d L fl tab _ _ r (hRows (Or.inr ho))⟩

/-- The first list of half 0 (the block's first bag) names rows of the table when half 0 holds block `b`'s table rows. -/
theorem hin_list0 (b : Nat) (g1 : Buf (Elt F) ((sTix : Memref sig .scVector .vmem S2048 .i32).view.loc (thr d L)))
    (hfl : ∀ n, (fl n).toNat ≤ 999999) (hT : TixV d L fl (wL L).val b 0 g1) :
    ∀ x, ((listM k1_off2 k1_off2_inb).view.read (Elt F) g1 x).toNat < S507904x128.size (gathers_S507904x128_S50x128).axis := by
  intro x
  have hx : (x 0).val < 50 := (x 0).isLt
  have h0 : k1_off2 0 = 0 := by rw [k1_off2_eq]; rfl
  have hb : k1_off2 0 + (x 0).val < 2048 := by omega
  have key := list_read d L g1 k1_off2 k1_off2_inb (show Fin 50 from x 0) hb
  have e : (ix1 (show Fin 50 from x 0) : S50.Idx) = x := funext fun a => by match a with | ⟨0, _⟩ => rfl
  rw [e] at key
  rw [key]
  have e2 : (ix1 (⟨k1_off2 0 + (x 0).val, hb⟩ : Fin 2048) : S2048.Idx) = ix1 (⟨1024 * 0 + (x 0).val, by omega⟩ : Fin 2048) := by
    congr 1
  rw [e2, hT (x 0).val (by omega) (by decide)]
  exact TileMath.trow_lt _ (blkWord_le fl hfl _ _ _)

end Glue

end Cert.Proof.BagB
end
-- ==== Proof.TileInitB.lean ====
/-
  A gather in flight whose list is held at contents that agree, on the list, with other contents.
-/
import proofs.«203835_g19404662243951_cont_8to1_399_35_alg».proof.Proof.TilePreB
import proofs.«203835_g19404662243951_cont_8to1_399_35_alg».proof.Proof.PayB
import proofs.«203835_g19404662243951_cont_8to1_399_35_alg».proof.Proof.TileAbbrevB
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

omit [FloatOps F] in
/-- A gather in flight over a list held at contents that agree, on the list, with other contents, is the flight at those. -/
theorem flight_list_congr (qt : PosShare TreeShare) (tab : FVec F Spec.STab .f32)
    (r : Buf (Elt F) ((sRows : Memref sig .scVector .vmem S2x50x128 .f32).view.loc (thr d L)))
    (ga gb : Buf (Elt F) ((sTix : Memref sig .scVector .vmem S2048 .i32).view.loc (thr d L)))
    (o : Fin 1 → Nat) (ho : ∀ a, o a + S50.size a ≤ S2048.size a) :
    iprop(⌜∀ i ∈ (listM o ho).view.set, ga i = gb i⌝
        ∗ Transfers.Flight countersEmb (thr d L) (SemLoc.dma cc1_scratch5.sem) (default : HIx 1) 204800
          iprop((((sRows : Memref sig .scVector .vmem S2x50x128 .f32).view.loc (thr d L) ↦[(h0M).view.set]{fullShare} r)
              ∗ ((sTix : Memref sig .scVector .vmem S2048 .i32).view.loc (thr d L) ↦[(listM o ho).view.set]{fullShare} ga))
            ∗ ((tV : Memref sig .scVector .hbm S507904x128 .f32).view.loc (thr d L) ↦[(tVM).view.set]{qt} tab)))
      ⊢ (Transfers.Flight countersEmb (thr d L) (SemLoc.dma cc1_scratch5.sem) (default : HIx 1) 204800
          iprop((((sRows : Memref sig .scVector .vmem S2x50x128 .f32).view.loc (thr d L) ↦[(h0M).view.set]{fullShare} r)
              ∗ ((sTix : Memref sig .scVector .vmem S2048 .i32).view.loc (thr d L) ↦[(listM o ho).view.set]{fullShare} gb))
            ∗ ((tV : Memref sig .scVector .hbm S507904x128 .f32).view.loc (thr d L) ↦[(tVM).view.set]{qt} tab)) : sProp 𝕄) := by
  iintro ⟨%h, H⟩
  rw [← pointsTo_congr (f := ga) (g := gb) h]
  iexact H

end Tile

end Cert.Proof.BagB
end
-- ==== Proof.TileEntryB.lean ====
/-
  The values the two conversion scratches hold when the first pair loop is entered: the index scratch's two halves hold the
  worker's first two blocks of index words, so every store of the two conversions writes the table rows (column offsets) of
  the flat index words at its positions, and the scratches hold the table rows and column offsets of blocks 0 and 1.
-/
import proofs.«203835_g19404662243951_cont_8to1_399_35_alg».proof.Proof.TileFactsB
import proofs.«203835_g19404662243951_cont_8to1_399_35_alg».proof.Proof.TileConv

noncomputable section

namespace Cert.Proof.BagB
open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F]

section Tile

variable (d : Dev nD) (L : grid1.Coords)

/-! ## The conversion's stores, at the loop's entry -/

/-- The flat index word a position of the index scratch holds while its halves hold blocks 0 and 1. -/
def G0 (fl : IVec Spec.SFlat 32) (A : Nat) : S2048.Idx → BitVec 32 := fun y => Spec.flatAt fl (A + (y 0).val)

omit [FloatOps F] in
theorem Tix_of_writes (f : Buf (Elt F) ((sTix : Memref sig .scVector .vmem S2048 .i32).view.loc (thr d L)))
    (Lc : List (View.Piece (Elt F) S2048 .i32)) (G : S2048.Idx → BitVec 32)
    (hG : ∀ p ∈ Lc, ∀ x : p.1.shape.Idx, p.2 x = G (p.1.emb x)) (hcov : ∀ y : S2048.Idx, ∃ p ∈ Lc, y ∈ p.1.set) (i : S2048.Idx) :
    ((sTix : Memref sig .scVector .vmem S2048 .i32).view.writes (Elt F) f Lc) i = G i :=
  View.read_writes_apply_of_pieces (Val := Elt F) (sTix : Memref sig .scVector .vmem S2048 .i32).view f G Lc hG i (hcov i)

omit [FloatOps F] in
theorem Rv_of_writes (f : Buf (Elt F) ((sRv : Memref sig .scVector .vmem S2048 .i32).view.loc (thr d L)))
    (Lc : List (View.Piece (Elt F) S2048 .i32)) (G : S2048.Idx → BitVec 32)
    (hG : ∀ p ∈ Lc, ∀ x : p.1.shape.Idx, p.2 x = G (p.1.emb x)) (hcov : ∀ y : S2048.Idx, ∃ p ∈ Lc, y ∈ p.1.set) (i : S2048.Idx) :
    ((sRv : Memref sig .scVector .vmem S2048 .i32).view.writes (Elt F) f Lc) i = G i :=
  View.read_writes_apply_of_pieces (Val := Elt F) (sRv : Memref sig .scVector .vmem S2048 .i32).view f G Lc hG i (hcov i)

omit [FloatOps F] in
/-- The words a copy of 1024 of the worker's index words, those from its word `o` on, lands at position `o` of the index
    scratch. -/
theorem dma_G0 (fl : IVec Spec.SFlat 32) (c : BitVec 32) (o : Nat) (ho : o + 1024 ≤ 2048)
    (hc : k1_off1 L c = ![8192 * (wL L).val + o])
    (inbS : ∀ a, (k1_off1 L c) a + S1024.size a ≤ S262144.size a)
    (inbP : ∀ a, (![o] : Fin 1 → Nat) a + S1024.size a ≤ S2048.size a) (x : S1024.Idx) :
    ReadAs.same.apply (View.read (Elt F) ((iV : Memref sig .scVector .hbm S262144 .i32).slice (Rect.unit (s := S262144) (k1_off1 L c) S1024.size inbS) (fun _ => rfl)).view fl) x
      = G0 fl (8192 * (wL L).val) ((Rect.unit (s := S2048) ![o] S1024.size inbP).emb x) := by
  have hx : (x 0).val < 1024 := (x 0).isLt
  have hw : (wL L).val < 32 := (wL L).isLt
  unfold G0
  have hn : 8192 * (wL L).val + (((Rect.unit (s := S2048) ![o] S1024.size inbP).emb x) 0).val < 262144 := by
    show 8192 * (wL L).val + (o + 1 * (x 0).val) < 262144
    omega
  rw [TileMath.flatAt_eq fl _ hn, ReadAs.apply_same, View.read_apply, cast_eq]
  congr 1
  funext a; apply Fin.ext
  match a with
  | ⟨0, _⟩ =>
    show (k1_off1 L c) 0 + 1 * (x 0).val = 8192 * (wL L).val + (o + 1 * (x 0).val)
    rw [hc]
    show 8192 * (wL L).val + o + 1 * (x 0).val = _
    omega

omit [FloatOps F] in
theorem off1_0 : k1_off1 L 0#32 = ![8192 * (wL L).val + 0] := by
  have h := k1_off1_eq L ⟨0, by decide⟩
  have hwv : (wL L).val = (L 1).val * 2 + (L 0).val := rfl
  rw [show (0#32 : BitVec 32) = BitVec.ofNat 32 (1024 * (⟨0, by decide⟩ : Fin 2).val) from rfl, h, hwv]
  congr 1
  show 16384 * (L 1).val + 8192 * (L 0).val + 1024 * 0 = 8192 * ((L 1).val * 2 + (L 0).val) + 0
  omega
omit [FloatOps F] in
theorem off1_1 : k1_off1 L 1024#32 = ![8192 * (wL L).val + 1024] := by
  have h := k1_off1_eq L ⟨1, by decide⟩
  have hwv : (wL L).val = (L 1).val * 2 + (L 0).val := rfl
  rw [show (1024#32 : BitVec 32) = BitVec.ofNat 32 (1024 * (⟨1, by decide⟩ : Fin 2).val) from rfl, h, hwv]
  congr 1
  show 16384 * (L 1).val + 8192 * (L 0).val + 1024 * 1 = 8192 * ((L 1).val * 2 + (L 0).val) + 1024
  omega

omit [FloatOps F] in
theorem flatAt_le (fl : IVec Spec.SFlat 32) (hfl : ∀ n, (fl n).toNat ≤ 999999) (n : Nat) : (Spec.flatAt fl n).toNat ≤ 999999 := by
  unfold Spec.flatAt
  split
  · exact hfl _
  · decide

/-- What the two scratches hold at the first loop's entry, from their words' closed form. -/
theorem entry_facts (fl : IVec Spec.SFlat 32) (hfl : ∀ n, (fl n).toNat ≤ 999999)
    (g1 : Buf (Elt F) ((sTix : Memref sig .scVector .vmem S2048 .i32).view.loc (thr d L)))
    (g2 : Buf (Elt F) ((sRv : Memref sig .scVector .vmem S2048 .i32).view.loc (thr d L)))
    (h1 : ∀ i : S2048.Idx, g1 i = Spec.trow (G0 fl (8192 * (wL L).val) i))
    (h2 : ∀ i : S2048.Idx, g2 i = Spec.tcol (G0 fl (8192 * (wL L).val) i)) :
    TixB d L g1 ∧ RvB d L g2 ∧ TixV d L fl (wL L).val 0 0 g1 ∧ RvV d L fl (wL L).val 0 0 g2
      ∧ TixV d L fl (wL L).val (0 + 1) 1 g1 ∧ RvV d L fl (wL L).val (0 + 1) 1 g2 := by
  refine ⟨fun i => ?_, fun i => ?_, fun n hn hh => ?_, fun n hn hh => ?_, fun n hn hh => ?_, fun n hn hh => ?_⟩
  · show (g1 i).toNat < 507904
    rw [h1]; exact TileMath.trow_lt _ (flatAt_le fl hfl _)
  · show g2 i = 0#32 ∨ g2 i = 64#32
    rw [h2]; exact TileMath.tcol_cases _
  · rw [h1]; unfold G0 blkWord; congr 2
    show 8192 * (wL L).val + (1024 * 0 + n) = 8192 * (wL L).val + 1024 * 0 + n
    omega
  · rw [h2]; unfold G0 blkWord; congr 2
    show 8192 * (wL L).val + (1024 * 0 + n) = 8192 * (wL L).val + 1024 * 0 + n
    omega
  · rw [h1]; unfold G0 blkWord; congr 2
    show 8192 * (wL L).val + (1024 * 1 + n) = 8192 * (wL L).val + 1024 * (0 + 1) + n
    omega
  · rw [h2]; unfold G0 blkWord; congr 2
    show 8192 * (wL L).val + (1024 * 1 + n) = 8192 * (wL L).val + 1024 * (0 + 1) + n
    omega

end Tile

end Cert.Proof.BagB
end
-- ==== Proof.TileConvSiteB.lean ====
/-
  One conversion inside the block passes, as facts of the two scratches: sixty-four stores over whatever a scratch held,
  tiling one half, whose payloads are the table rows (column offsets) of a block's words, leave that half holding the
  block's table rows (column offsets) and the other half as it was.
-/
import proofs.«203835_g19404662243951_cont_8to1_399_35_alg».proof.Proof.TileEntryB
import proofs.«203835_g19404662243951_cont_8to1_399_35_alg».proof.Proof.TileConv3
import proofs.«203835_g19404662243951_cont_8to1_399_35_alg».proof.Proof.TileGlueB

noncomputable section

namespace Cert.Proof.BagB
open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F]

section Tile

variable (d : Dev nD) (L : grid1.Coords) (fl : IVec Spec.SFlat 32)

omit [FloatOps F] in
/-- The words a copy of block `bk` of the worker's index words carries. -/
theorem dma_blk (c0 : Fin 1 → Nat) (bk : Nat) (hbk : bk < 8) (hc : c0 = ![8192 * (wL L).val + 1024 * bk])
    (inbS : ∀ a, c0 a + S1024.size a ≤ S262144.size a) (x : S1024.Idx) :
    ReadAs.same.apply (View.read (Elt F) ((iV : Memref sig .scVector .hbm S262144 .i32).slice (Rect.unit (s := S262144) c0 S1024.size inbS) (fun _ => rfl)).view fl) x
      = blkWord fl (wL L).val bk (x 0).val := by
  have hx : (x 0).val < 1024 := (x 0).isLt
  have hw : (wL L).val < 32 := (wL L).isLt
  unfold blkWord
  have hn : 8192 * (wL L).val + 1024 * bk + (x 0).val < 262144 := by omega
  rw [TileMath.flatAt_eq fl _ hn, ReadAs.apply_same, View.read_apply, cast_eq]
  congr 1
  funext a; apply Fin.ext
  match a with
  | ⟨0, _⟩ =>
    show c0 0 + 1 * (x 0).val = 8192 * (wL L).val + 1024 * bk + (x 0).val
    rw [hc]
    show 8192 * (wL L).val + 1024 * bk + 1 * (x 0).val = _
    omega

omit [FloatOps F] in
theorem off4_blk (t : Fin k1_t1_loop.trips) : k1_off4 L t = ![8192 * (wL L).val + 1024 * (2 * t.val + 1)] := by
  have hwv : (wL L).val = (L 1).val * 2 + (L 0).val := rfl
  rw [k1_off4_eq L t, hwv]
  congr 1
  omega
omit [FloatOps F] in
theorem off62_blk (t : Fin k1_t1_loop.trips) : k1_off62 L t = ![8192 * (wL L).val + 1024 * (2 * t.val + 3)] := by
  have hwv : (wL L).val = (L 1).val * 2 + (L 0).val := rfl
  rw [k1_off62_eq L t, hwv]
  congr 1
  omega
omit [FloatOps F] in
theorem off5_blk (t : Fin k1_t1_loop.trips) : k1_off5 L t = ![8192 * (wL L).val + 1024 * (2 * t.val + 2)] := by
  have hwv : (wL L).val = (L 1).val * 2 + (L 0).val := rfl
  rw [k1_off5_eq L t, hwv]
  congr 1
  omega

omit [FloatOps F] in
/-- Sixty-four stores tiling half `h` with the table rows of block `bk`'s words leave that half holding them. -/
theorem conv_TixV (g : Buf (Elt F) ((sTix : Memref sig .scVector .vmem S2048 .i32).view.loc (thr d L)))
    (Lc : List (View.Piece (Elt F) S2048 .i32)) (w bk h : Nat)
    (hG : ∀ p ∈ Lc, ∀ x : p.1.shape.Idx, p.2 x = Spec.trow (blkWord fl w bk (((p.1.emb x) 0).val - 1024 * h)))
    (htile : View.Piece.chain (1024 * h) Lc (1024 * h + 1024) = true) :
    TixV d L fl w bk h ((sTix : Memref sig .scVector .vmem S2048 .i32).view.writes (Elt F) g Lc) := by
  intro n hn hh
  have key := View.read_writes_apply_of_pieces (Val := Elt F) (sTix : Memref sig .scVector .vmem S2048 .i32).view g
    (fun y : S2048.Idx => Spec.trow (blkWord fl w bk ((y 0).val - 1024 * h))) Lc hG
    (ix1 (⟨1024 * h + n, by omega⟩ : Fin 2048))
    (View.mem_of_chain Lc (1024 * h) (1024 * h + 1024) htile _ (by show 1024 * h ≤ 1024 * h + n ∧ 1024 * h + n < 1024 * h + 1024; omega))
  refine Eq.trans key ?_
  show Spec.trow (blkWord fl w bk (1024 * h + n - 1024 * h)) = _
  rw [Nat.add_sub_cancel_left]

omit [FloatOps F] in
/-- The same for the column offsets. -/
theorem conv_RvV (g : Buf (Elt F) ((sRv : Memref sig .scVector .vmem S2048 .i32).view.loc (thr d L)))
    (Lc : List (View.Piece (Elt F) S2048 .i32)) (w bk h : Nat)
    (hG : ∀ p ∈ Lc, ∀ x : p.1.shape.Idx, p.2 x = Spec.tcol (blkWord fl w bk (((p.1.emb x) 0).val - 1024 * h)))
    (htile : View.Piece.chain (1024 * h) Lc (1024 * h + 1024) = true) :
    RvV d L fl w bk h ((sRv : Memref sig .scVector .vmem S2048 .i32).view.writes (Elt F) g Lc) := by
  intro n hn hh
  have key := View.read_writes_apply_of_pieces (Val := Elt F) (sRv : Memref sig .scVector .vmem S2048 .i32).view g
    (fun y : S2048.Idx => Spec.tcol (blkWord fl w bk ((y 0).val - 1024 * h))) Lc hG
    (ix1 (⟨1024 * h + n, by omega⟩ : Fin 2048))
    (View.mem_of_chain Lc (1024 * h) (1024 * h + 1024) htile _ (by show 1024 * h ≤ 1024 * h + n ∧ 1024 * h + n < 1024 * h + 1024; omega))
  refine Eq.trans key ?_
  show Spec.tcol (blkWord fl w bk (1024 * h + n - 1024 * h)) = _
  rw [Nat.add_sub_cancel_left]

omit [FloatOps F] in
/-- Stores inside a run of 1024 words leave a word outside it as it was. -/
theorem keep_word (g : Buf (Elt F) ((sTix : Memref sig .scVector .vmem S2048 .i32).view.loc (thr d L)))
    (Lc : List (View.Piece (Elt F) S2048 .i32)) (O : Nat) (hin : View.Piece.chain O Lc (O + 1024) = true) (i : S2048.Idx)
    (hi : (i 0).val < O ∨ O + 1024 ≤ (i 0).val) :
    ((sTix : Memref sig .scVector .vmem S2048 .i32).view.writes (Elt F) g Lc) i = g i :=
  View.read_writes_apply_of_forall_not_mem (Val := Elt F) (sTix : Memref sig .scVector .vmem S2048 .i32).view g i Lc
    (View.not_mem_of_chain Lc O (O + 1024) hin i hi)

omit [FloatOps F] in
/-- Stores inside half `h` leave the other half's table rows. -/
theorem keep_TixV (g : Buf (Elt F) ((sTix : Memref sig .scVector .vmem S2048 .i32).view.loc (thr d L)))
    (Lc : List (View.Piece (Elt F) S2048 .i32)) (w bk h hk : Nat) (hne : hk ≠ h) (hh : h < 2)
    (hin : View.Piece.chain (1024 * h) Lc (1024 * h + 1024) = true) (hold : TixV d L fl w bk hk g) :
    TixV d L fl w bk hk ((sTix : Memref sig .scVector .vmem S2048 .i32).view.writes (Elt F) g Lc) := by
  intro n hn hhk
  rw [← hold n hn hhk]
  exact View.read_writes_apply_of_forall_not_mem (Val := Elt F) (sTix : Memref sig .scVector .vmem S2048 .i32).view g
    (ix1 (⟨1024 * hk + n, by omega⟩ : Fin 2048)) Lc
    (View.not_mem_of_chain Lc (1024 * h) (1024 * h + 1024) hin _ (by show 1024 * hk + n < 1024 * h ∨ 1024 * h + 1024 ≤ 1024 * hk + n; omega))

omit [FloatOps F] in
theorem keep_RvV (g : Buf (Elt F) ((sRv : Memref sig .scVector .vmem S2048 .i32).view.loc (thr d L)))
    (Lc : List (View.Piece (Elt F) S2048 .i32)) (w bk h hk : Nat) (hne : hk ≠ h) (hh : h < 2)
    (hin : View.Piece.chain (1024 * h) Lc (1024 * h + 1024) = true) (hold : RvV d L fl w bk hk g) :
    RvV d L fl w bk hk ((sRv : Memref sig .scVector .vmem S2048 .i32).view.writes (Elt F) g Lc) := by
  intro n hn hhk
  rw [← hold n hn hhk]
  exact View.read_writes_apply_of_forall_not_mem (Val := Elt F) (sRv : Memref sig .scVector .vmem S2048 .i32).view g
    (ix1 (⟨1024 * hk + n, by omega⟩ : Fin 2048)) Lc
    (View.not_mem_of_chain Lc (1024 * h) (1024 * h + 1024) hin _ (by show 1024 * hk + n < 1024 * h ∨ 1024 * h + 1024 ≤ 1024 * hk + n; omega))

variable (tab : FVec F Spec.STab .f32)

/-- An even block's loop entry: half 0 holds the block (handed over), half 1 has just been converted from the next block. -/
theorem even_entry (e : Nat) (Po : Prop)
    (r : Buf (Elt F) ((sRows : Memref sig .scVector .vmem S2x50x128 .f32).view.loc (thr d L)))
    (g1 : Buf (Elt F) ((sTix : Memref sig .scVector .vmem S2048 .i32).view.loc (thr d L)))
    (g2 : Buf (Elt F) ((sRv : Memref sig .scVector .vmem S2048 .i32).view.loc (thr d L)))
    (wb : Buf (Elt F) ((sWb : Memref sig .scVector .vmem S2x16x64 .f32).view.loc (thr d L)))
    (L1 L2 : List (View.Piece (Elt F) S2048 .i32)) (hfl : ∀ n, (fl n).toNat ≤ 999999)
    (hT0 : TixV d L fl (wL L).val e 0 g1) (hR0 : RvV d L fl (wL L).val e 0 g2) (hRows : RowsV d L fl tab (wL L).val e (2 * 0) 0 r)
    (hG1 : ∀ p ∈ L1, ∀ x : p.1.shape.Idx, p.2 x = Spec.trow (blkWord fl (wL L).val (e + 1) (((p.1.emb x) 0).val - 1024 * 1)))
    (hc1 : View.Piece.chain (1024 * 1) L1 (1024 * 1 + 1024) = true)
    (hG2 : ∀ p ∈ L2, ∀ x : p.1.shape.Idx, p.2 x = Spec.tcol (blkWord fl (wL L).val (e + 1) (((p.1.emb x) 0).val - 1024 * 1)))
    (hc2 : View.Piece.chain (1024 * 1) L2 (1024 * 1 + 1024) = true) (hPo : Po) :
    TixB d L ((sTix : Memref sig .scVector .vmem S2048 .i32).view.writes (Elt F) g1 L1)
      ∧ RvB d L ((sRv : Memref sig .scVector .vmem S2048 .i32).view.writes (Elt F) g2 L2) ∧ Po
      ∧ EvenV d L fl tab e 0 r ((sTix : Memref sig .scVector .vmem S2048 .i32).view.writes (Elt F) g1 L1)
          ((sRv : Memref sig .scVector .vmem S2048 .i32).view.writes (Elt F) g2 L2) wb := by
  have a0 := keep_TixV d L fl g1 L1 (wL L).val e 1 0 (by decide) (by decide) hc1 hT0
  have b0 := keep_RvV d L fl g2 L2 (wL L).val e 1 0 (by decide) (by decide) hc2 hR0
  have a1 := conv_TixV d L fl g1 L1 (wL L).val (e + 1) 1 hG1 hc1
  have b1 := conv_RvV d L fl g2 L2 (wL L).val (e + 1) 1 hG2 hc2
  exact ⟨TixB_of_TixV d L fl _ _ _ _ hfl a0 a1, RvB_of_RvV d L fl _ _ _ _ b0 b1, hPo, a0, b0, a1, b1, hRows, WbV_zero d L fl tab _ _ _ _⟩

/-- An odd block's loop entry (not the last): half 1 holds the block (handed over), half 0 has just been converted from the
    next block. -/
theorem odd_entry (o : Nat) (Po : Prop)
    (r : Buf (Elt F) ((sRows : Memref sig .scVector .vmem S2x50x128 .f32).view.loc (thr d L)))
    (g1 : Buf (Elt F) ((sTix : Memref sig .scVector .vmem S2048 .i32).view.loc (thr d L)))
    (g2 : Buf (Elt F) ((sRv : Memref sig .scVector .vmem S2048 .i32).view.loc (thr d L)))
    (wb : Buf (Elt F) ((sWb : Memref sig .scVector .vmem S2x16x64 .f32).view.loc (thr d L)))
    (L1 L2 : List (View.Piece (Elt F) S2048 .i32)) (hfl : ∀ n, (fl n).toNat ≤ 999999)
    (hT1 : TixV d L fl (wL L).val o 1 g1) (hR1 : RvV d L fl (wL L).val o 1 g2) (hRows : RowsV d L fl tab (wL L).val o (2 * 0) 0 r)
    (hG1 : ∀ p ∈ L1, ∀ x : p.1.shape.Idx, p.2 x = Spec.trow (blkWord fl (wL L).val (o + 1) (((p.1.emb x) 0).val - 1024 * 0)))
    (hc1 : View.Piece.chain (1024 * 0) L1 (1024 * 0 + 1024) = true)
    (hG2 : ∀ p ∈ L2, ∀ x : p.1.shape.Idx, p.2 x = Spec.tcol (blkWord fl (wL L).val (o + 1) (((p.1.emb x) 0).val - 1024 * 0)))
    (hc2 : View.Piece.chain (1024 * 0) L2 (1024 * 0 + 1024) = true) (hPo : Po) :
    TixB d L ((sTix : Memref sig .scVector .vmem S2048 .i32).view.writes (Elt F) g1 L1)
      ∧ RvB d L ((sRv : Memref sig .scVector .vmem S2048 .i32).view.writes (Elt F) g2 L2) ∧ Po
      ∧ OddV d L fl tab o 0 r ((sTix : Memref sig .scVector .vmem S2048 .i32).view.writes (Elt F) g1 L1)
          ((sRv : Memref sig .scVector .vmem S2048 .i32).view.writes (Elt F) g2 L2) wb := by
  have a1 := keep_TixV d L fl g1 L1 (wL L).val o 0 1 (by decide) (by decide) hc1 hT1
  have b1 := keep_RvV d L fl g2 L2 (wL L).val o 0 1 (by decide) (by decide) hc2 hR1
  have a0 := conv_TixV d L fl g1 L1 (wL L).val (o + 1) 0 hG1 hc1
  have b0 := conv_RvV d L fl g2 L2 (wL L).val (o + 1) 0 hG2 hc2
  exact ⟨TixB_of_TixV d L fl _ _ _ _ hfl a0 a1, RvB_of_RvV d L fl _ _ _ _ b0 b1, hPo, a1, b1, fun _ => ⟨a0, b0⟩, fun _ => hRows,
    WbV_zero d L fl tab _ _ _ _⟩

end Tile

end Cert.Proof.BagB
namespace Cert.Proof.TileMathB
open Cert.Proof.TileMath
open Idealize.ShloMosaic Idealize.ShloMosaic.ValueIdx Cert.Proof.Spec

variable {sig : RefSig} {κ : Kind} {sp : Space} {F : FTy → Type} [∀ e, Nonempty (Elt F e)] {N : Nat}

/-- The head-piece conversion step in the form a list of stores' agreement asks: at the store's own position. -/
theorem tconv_trow_at (v : View sig κ sp ⟨1, ![N]⟩ .i32) (O n off : Nat)
    (inbP : ∀ a, (![O] : Fin 1 → Nat) a + (![n] : Fin 1 → Nat) a ≤ (⟨1, ![N]⟩ : Shape).size a)
    (inbB : ∀ a, (![off] : Fin 1 → Nat) a + (![16] : Fin 1 → Nat) a ≤ (⟨1, ![N]⟩ : Shape).size a)
    (w : (Rect.unit (s := ⟨1, ![N]⟩) ![O] ![n] inbP).shape.Idx → BitVec 32) (L : List (View.Piece (Elt F) ⟨1, ![N]⟩ .i32))
    (Wf : Nat → BitVec 32) (hw : ∀ x', w x' = Wf (x' 0).val) (h1 : O ≤ off) (h2 : off + 16 ≤ O + n)
    (hc1 : (Rect.unit (s := ⟨1, ![N]⟩) ![off] ![16] inbB).toLoadRect.shape.ShapeCasts ⟨1, ![16]⟩) (hc2 : (⟨1, ![16]⟩ : Shape).ShapeCasts ⟨1, ![16]⟩)
    (x : (⟨1, ![16]⟩ : Shape).Idx) :
    shapeCast ⟨1, ![16]⟩ (addi (muli (shrui (shapeCast ⟨1, ![16]⟩ (v.readCov (⟨Rect.unit (s := ⟨1, ![N]⟩) ![O] ![n] inbP, w⟩ :: L) (Rect.unit (s := ⟨1, ![N]⟩) ![off] ![16] inbB).toLoadRect) hc1)
        (broadcast ⟨1, ![16]⟩ 7#32)) (broadcast ⟨1, ![16]⟩ 64#32))
      (andi (shapeCast ⟨1, ![16]⟩ (v.readCov (⟨Rect.unit (s := ⟨1, ![N]⟩) ![O] ![n] inbP, w⟩ :: L) (Rect.unit (s := ⟨1, ![N]⟩) ![off] ![16] inbB).toLoadRect) hc1) (broadcast ⟨1, ![16]⟩ 63#32))) hc2 x
      = trow (Wf ((((Rect.unit (s := ⟨1, ![N]⟩) ![off] ![16] inbB).emb x) 0).val - O)) := by
  rw [tconv_trow_head v O n off inbP inbB w L Wf hw h1 h2 hc1 hc2 x]
  congr 2
  show off - O + (x 0).val = off + 1 * (x 0).val - O
  omega

theorem tconv_tcol_at (v : View sig κ sp ⟨1, ![N]⟩ .i32) (O n off : Nat)
    (inbP : ∀ a, (![O] : Fin 1 → Nat) a + (![n] : Fin 1 → Nat) a ≤ (⟨1, ![N]⟩ : Shape).size a)
    (inbB : ∀ a, (![off] : Fin 1 → Nat) a + (![16] : Fin 1 → Nat) a ≤ (⟨1, ![N]⟩ : Shape).size a)
    (w : (Rect.unit (s := ⟨1, ![N]⟩) ![O] ![n] inbP).shape.Idx → BitVec 32) (L : List (View.Piece (Elt F) ⟨1, ![N]⟩ .i32))
    (Wf : Nat → BitVec 32) (hw : ∀ x', w x' = Wf (x' 0).val) (h1 : O ≤ off) (h2 : off + 16 ≤ O + n)
    (hc1 : (Rect.unit (s := ⟨1, ![N]⟩) ![off] ![16] inbB).toLoadRect.shape.ShapeCasts ⟨1, ![16]⟩) (hc2 : (⟨1, ![16]⟩ : Shape).ShapeCasts ⟨1, ![16]⟩)
    (x : (⟨1, ![16]⟩ : Shape).Idx) :
    shapeCast ⟨1, ![16]⟩ (muli (andi (shrui (shapeCast ⟨1, ![16]⟩ (v.readCov (⟨Rect.unit (s := ⟨1, ![N]⟩) ![O] ![n] inbP, w⟩ :: L) (Rect.unit (s := ⟨1, ![N]⟩) ![off] ![16] inbB).toLoadRect) hc1)
        (broadcast ⟨1, ![16]⟩ 6#32)) (broadcast ⟨1, ![16]⟩ 1#32)) (broadcast ⟨1, ![16]⟩ 64#32)) hc2 x
      = tcol (Wf ((((Rect.unit (s := ⟨1, ![N]⟩) ![off] ![16] inbB).emb x) 0).val - O)) := by
  rw [tconv_tcol_head v O n off inbP inbB w L Wf hw h1 h2 hc1 hc2 x]
  congr 2
  show off - O + (x 0).val = off + 1 * (x 0).val - O
  omega

end Cert.Proof.TileMathB
namespace Cert.Proof.BagB
open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F]

section Steps

variable (d : Dev nD) (L : grid1.Coords) (fl : IVec Spec.SFlat 32)

/-- The conversion step with the landed copy spelt out: the newest piece of the index scratch is the copy of block `bk`. -/
theorem step_trow [∀ e, Nonempty (Elt F e)] (c0 : Fin 1 → Nat) (bk : Nat) (hbk : bk < 8) (hc : c0 = ![8192 * (wL L).val + 1024 * bk])
    (inbS : ∀ a, c0 a + S1024.size a ≤ S262144.size a) (O off : Nat)
    (inbP : ∀ a, (![O] : Fin 1 → Nat) a + (![1024] : Fin 1 → Nat) a ≤ S2048.size a)
    (inbB : ∀ a, (![off] : Fin 1 → Nat) a + (![16] : Fin 1 → Nat) a ≤ S2048.size a)
    (Lr : List (View.Piece (Elt F) S2048 .i32)) (h1 : O ≤ off) (h2 : off + 16 ≤ O + 1024)
    (hc1 : (Rect.unit (s := S2048) ![off] ![16] inbB).toLoadRect.shape.ShapeCasts ⟨1, ![16]⟩) (hc2 : (⟨1, ![16]⟩ : Shape).ShapeCasts ⟨1, ![16]⟩)
    (x : (⟨1, ![16]⟩ : Shape).Idx) :
    shapeCast ⟨1, ![16]⟩ (addi (muli (shrui (shapeCast ⟨1, ![16]⟩ ((sIdx : Memref sig .scVector .vmem S2048 .i32).view.readCov
        (⟨Rect.unit (s := S2048) ![O] ![1024] inbP, ReadAs.same.apply (View.read (Elt F) ((iV : Memref sig .scVector .hbm S262144 .i32).slice (Rect.unit (s := S262144) c0 S1024.size inbS) (fun _ => rfl)).view fl)⟩ :: Lr)
        (Rect.unit (s := S2048) ![off] ![16] inbB).toLoadRect) hc1)
        (broadcast ⟨1, ![16]⟩ 7#32)) (broadcast ⟨1, ![16]⟩ 64#32))
      (andi (shapeCast ⟨1, ![16]⟩ ((sIdx : Memref sig .scVector .vmem S2048 .i32).view.readCov
        (⟨Rect.unit (s := S2048) ![O] ![1024] inbP, ReadAs.same.apply (View.read (Elt F) ((iV : Memref sig .scVector .hbm S262144 .i32).slice (Rect.unit (s := S262144) c0 S1024.size inbS) (fun _ => rfl)).view fl)⟩ :: Lr)
        (Rect.unit (s := S2048) ![off] ![16] inbB).toLoadRect) hc1) (broadcast ⟨1, ![16]⟩ 63#32))) hc2 x
      = Spec.trow (blkWord fl (wL L).val bk ((((Rect.unit (s := S2048) ![off] ![16] inbB).emb x) 0).val - O)) :=
  TileMathB.tconv_trow_at _ O 1024 off inbP inbB _ Lr (blkWord fl (wL L).val bk)
    (fun x' => dma_blk (F := F) L fl c0 bk hbk hc inbS x') h1 h2 hc1 hc2 x

theorem step_tcol [∀ e, Nonempty (Elt F e)] (c0 : Fin 1 → Nat) (bk : Nat) (hbk : bk < 8) (hc : c0 = ![8192 * (wL L).val + 1024 * bk])
    (inbS : ∀ a, c0 a + S1024.size a ≤ S262144.size a) (O off : Nat)
    (inbP : ∀ a, (![O] : Fin 1 → Nat) a + (![1024] : Fin 1 → Nat) a ≤ S2048.size a)
    (inbB : ∀ a, (![off] : Fin 1 → Nat) a + (![16] : Fin 1 → Nat) a ≤ S2048.size a)
    (Lr : List (View.Piece (Elt F) S2048 .i32)) (h1 : O ≤ off) (h2 : off + 16 ≤ O + 1024)
    (hc1 : (Rect.unit (s := S2048) ![off] ![16] inbB).toLoadRect.shape.ShapeCasts ⟨1, ![16]⟩) (hc2 : (⟨1, ![16]⟩ : Shape).ShapeCasts ⟨1, ![16]⟩)
    (x : (⟨1, ![16]⟩ : Shape).Idx) :
    shapeCast ⟨1, ![16]⟩ (muli (andi (shrui (shapeCast ⟨1, ![16]⟩ ((sIdx : Memref sig .scVector .vmem S2048 .i32).view.readCov
        (⟨Rect.unit (s := S2048) ![O] ![1024] inbP, ReadAs.same.apply (View.read (Elt F) ((iV : Memref sig .scVector .hbm S262144 .i32).slice (Rect.unit (s := S262144) c0 S1024.size inbS) (fun _ => rfl)).view fl)⟩ :: Lr)
        (Rect.unit (s := S2048) ![off] ![16] inbB).toLoadRect) hc1)
        (broadcast ⟨1, ![16]⟩ 6#32)) (broadcast ⟨1, ![16]⟩ 1#32)) (broadcast ⟨1, ![16]⟩ 64#32)) hc2 x
      = Spec.tcol (blkWord fl (wL L).val bk ((((Rect.unit (s := S2048) ![off] ![16] inbB).emb x) 0).val - O)) :=
  TileMathB.tconv_tcol_at _ O 1024 off inbP inbB _ Lr (blkWord fl (wL L).val bk)
    (fun x' => dma_blk (F := F) L fl c0 bk hbk hc inbS x') h1 h2 hc1 hc2 x

end Steps

end Cert.Proof.BagB
end
-- ==== Proof.TileListB.lean ====
/-
  A bag's list of fifty row numbers in the row-number scratch, as positions; and the step that drops a store not covering
  a position from the list of stores a buffer's contents are written by.
-/
import proofs.«203835_g19404662243951_cont_8to1_399_35_alg».proof.Proof.TileAbbrevB
import proofs.«203835_g19404662243951_cont_8to1_399_35_alg».proof.Proof.TileWrites

noncomputable section

namespace Cert.Proof.BagB
open Cert.Kernel Cert.Kernel.Gen

open Idealize.ShloMosaic
open Idealize.ShloMosaic.SparseCore (S V T)
open Idealize.ShloMosaic.SparseCore.Cfg (HIx)
open Idealize.SL Idealize.SL.RA Idealize.SL.BI Idealize.SL.Sem

variable {F : FTy → Type}

/-- The list at offset `o` covers the positions `o 0 ≤ n < o 0 + 50`. -/
theorem mem_listM (o : Fin 1 → Nat) (ho : ∀ a, o a + S50.size a ≤ S2048.size a) (i : S2048.Idx) :
    i ∈ (listM o ho).view.set ↔ o 0 ≤ (i 0).val ∧ (i 0).val < o 0 + 50 := by
  simp only [Memref.view_slice, Memref.view_whole, View.set_slice_whole]
  rw [Rect.mem_set_unit]
  constructor
  · intro h; exact h 0
  · intro h a
    match a with
    | ⟨0, _⟩ => exact h

/-- A position outside a sixteen-word store at a literal offset. -/
theorem not_mem_store (off : Nat) (inb : ∀ a, (![off] : Fin 1 → Nat) a + S16.size a ≤ S2048.size a) (i : S2048.Idx)
    (h : (i 0).val < off ∨ off + 16 ≤ (i 0).val) : i ∉ (Rect.unit (s := S2048) ![off] S16.size inb).set := by
  intro hm
  have h0 := (Rect.mem_set_unit.mp hm) 0
  have e1 : (![off] : Fin 1 → Nat) 0 = off := rfl
  have e2 : S16.size 0 = 16 := rfl
  rw [e1, e2] at h0
  omega

/-- Drops the newest store of the list a buffer's contents are written by, the position not being one of its sixteen. -/
macro "peel_store" : tactic =>
  `(tactic| (refine (Idealize.ShloMosaic.View.read_writes_cons_of_not_mem _ _ _ _ _ (Cert.Proof.BagB.not_mem_store _ _ _ (by omega))).trans ?_))

end Cert.Proof.BagB
end
-- ==== Proof.TileAccB.lean ====
/-
  One bag's accumulation and its write-back rows, as pure facts: a sixteen-lane load of a gathered row at the row's
  column offset adds the row's term to an accumulator, so the four accumulators after `n` rows are the bag's partial
  sums of `n` terms; a store of sixteen lanes of a bag's sums into the write-back scratch extends what the scratch is
  known to hold.
-/
import proofs.«203835_g19404662243951_cont_8to1_399_35_alg».proof.Proof.TileValB

noncomputable section

namespace Cert.Proof.BagB
open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F]

section Tile

variable (d : Dev nD) (L : grid1.Coords)
variable (fl : IVec Spec.SFlat 32) (tab : FVec F Spec.STab .f32)

/-! ## The accumulate -/

/-- Row `j` of bag `g` of block `b`: the table's row for the bag's `j`-th word, read at column `x`; and the word's
    column offset. -/
def rowF (w b g : Nat) (j x : Nat) : F .f32 := Spec.tabAt tab (Spec.trow (blkWord fl w b (64 * g + j))).toNat x
def offF (w b g : Nat) (j : Nat) : Nat := (Spec.tcol (blkWord fl w b (64 * g + j))).toNat

/-- A sixteen-lane load of row `n` of a slot holding bag `g`'s rows, at the row's column offset word plus sixteen
    times the accumulator's number, read as a vector of sixteen: the row's term for that accumulator. -/
theorem load_acc (w b g : Nat) (sl : Fin 2)
    (r : Buf (Elt F) ((sRows : Memref sig .scVector .vmem S2x50x128 .f32).view.loc (thr d L)))
    (hR : RowsV d L fl tab w b g sl r) (n : Fin 50) (i : Fin 4) (c : BitVec 32) (hc : c = BitVec.ofNat 32 (16 * i.val))
    (rw : BitVec 32) (hrw : rw = Spec.tcol (blkWord fl w b (64 * g + n.val)))
    (off : Fin 3 → Nat) (hoff : off = ![sl.val, n.val, (rw + c).toNat])
    (inb : ∀ a, off a + S1x1x16.size a ≤ S2x50x128.size a) (hcast : S1x1x16.ShapeCasts S16) :
    shapeCast S16 ((sRows : Memref sig .scVector .vmem S2x50x128 .f32).view.readAt (Elt F)
        (Rect.unit (s := S2x50x128) off S1x1x16.size inb).toLoadRect r) hcast
      = fun l => rowF fl tab w b g n.val (offF fl w b g n.val + (16 * i.val + (l 0).val)) := by
  subst hoff hc hrw
  funext l
  have hl : (l 0).val < 16 := (l 0).isLt
  have hi := i.isLt
  have hre : Shape.reshapeEquiv hcast l = ix3 (0 : Fin 1) (0 : Fin 1) (⟨(l 0).val, hl⟩ : Fin 16) :=
    Shape.reshapeEquiv_eq_of_rowMajor hcast (by
      rw [Shape.rowMajor_val_three, Shape.rowMajor_val_one]
      show ((0 * 1 + 0) * 16 + (l 0).val) = (l 0).val
      omega)
  have hsum : (Spec.tcol (blkWord fl w b (64 * g + n.val)) + BitVec.ofNat 32 (16 * i.val)).toNat
      = (Spec.tcol (blkWord fl w b (64 * g + n.val))).toNat + 16 * i.val := by
    rw [BitVec.toNat_add, BitVec.toNat_ofNat]
    rcases TileMath.tcol_toNat_cases (blkWord fl w b (64 * g + n.val)) with h | h <;> rw [h] <;> omega
  have hcol : (Spec.tcol (blkWord fl w b (64 * g + n.val))).toNat + (16 * i.val + (l 0).val) < 128 :=
    TileMath.tcol_add_lt (blkWord fl w b (64 * g + n.val)) (16 * i.val + (l 0).val) (by omega) |> fun h => by omega
  have key := hR n ⟨(Spec.tcol (blkWord fl w b (64 * g + n.val))).toNat + (16 * i.val + (l 0).val), hcol⟩
  unfold shapeCast rowF offF
  rw [rows_load, hre]
  refine Eq.trans ?_ key
  congr 1
  funext a; apply Fin.ext
  match a with
  | ⟨0, _⟩ => rfl
  | ⟨1, _⟩ => rfl
  | ⟨2, _⟩ =>
    show (Spec.tcol (blkWord fl w b (64 * g + n.val)) + BitVec.ofNat 32 (16 * i.val)).toNat + (l 0).val
      = (Spec.tcol (blkWord fl w b (64 * g + n.val))).toNat + (16 * i.val + (l 0).val)
    rw [hsum]; omega

/-- So an accumulator holding the bag's accumulation of `n` rows holds, after the load of row `n` is added, that of
    `n + 1` rows. -/
theorem acc_step (w b g : Nat) (sl : Fin 2)
    (r : Buf (Elt F) ((sRows : Memref sig .scVector .vmem S2x50x128 .f32).view.loc (thr d L)))
    (hR : RowsV d L fl tab w b g sl r) (n : Fin 50) (i : Fin 4) (c : BitVec 32) (hc : c = BitVec.ofNat 32 (16 * i.val))
    (rw : BitVec 32) (hrw : rw = Spec.tcol (blkWord fl w b (64 * g + n.val)))
    (off : Fin 3 → Nat) (hoff : off = ![sl.val, n.val, (rw + c).toNat])
    (inb : ∀ a, off a + S1x1x16.size a ≤ S2x50x128.size a) (hcast : S1x1x16.ShapeCasts S16) :
    addf (AccMath.accVec (rowF fl tab w b g) (offF fl w b g) i.val n.val)
        (shapeCast S16 ((sRows : Memref sig .scVector .vmem S2x50x128 .f32).view.readAt (Elt F)
          (Rect.unit (s := S2x50x128) off S1x1x16.size inb).toLoadRect r) hcast)
      = AccMath.accVec (rowF fl tab w b g) (offF fl w b g) i.val (n.val + 1) := by
  rw [load_acc d L fl tab w b g sl r hR n i c hc rw hrw off hoff inb hcast, AccMath.accVec_succ]

omit d L in
/-- After the fifty rows, lane `l` of accumulator `i` is the bag's sum at column `16 i + l`. -/
theorem acc_final (w b g : Nat) (i : Fin 4) (l : (⟨1, ![16]⟩ : Shape).Idx) :
    AccMath.accVec (rowF fl tab w b g) (offF fl w b g) i.val 50 l
      = Spec.bagPartial fl tab (128 * w + 16 * b + g) (16 * i.val + (l 0).val) 50 := by
  have hl : (l 0).val < 16 := (l 0).isLt
  have hi := i.isLt
  exact AccMath.accAt_eq_bagPartial fl tab (128 * w + 16 * b + g) (rowF fl tab w b g) (offF fl w b g) _ (by omega)
    (fun j _ x _ => by unfold rowF; rw [blkWord_eq]) (fun j _ => by unfold offF; rw [blkWord_eq]) 50 (Nat.le_refl _)

/-! ## The write-back scratch -/

/-- Half `ib` of the write-back scratch holds the sums of block `b`'s bags at the entries `K` names. -/
def WbK (w b : Nat) (ib : Fin 2) (K : Fin 16 → Fin 64 → Prop)
    (wb : Buf (Elt F) ((sWb : Memref sig .scVector .vmem S2x16x64 .f32).view.loc (thr d L))) : Prop :=
  ∀ (g : Fin 16) (c : Fin 64), K g c → wb (ix3 ib g c) = Spec.bagPartial fl tab (128 * w + 16 * b + g.val) c.val 50

theorem WbV_iff_WbK (w b : Nat) (ib : Fin 2) (n : Nat) (wb : Buf (Elt F) ((sWb : Memref sig .scVector .vmem S2x16x64 .f32).view.loc (thr d L))) :
    WbV d L fl tab w b ib n wb ↔ WbK d L fl tab w b ib (fun g _ => g.val < n) wb :=
  ⟨fun h g c hg => h g c hg, fun h g c hg => h g c hg⟩

/-- A store of sixteen lanes of bag `g`'s sums at columns `16 i …` of row `g` of half `ib` adds those entries to what
    the half is known to hold. -/
theorem WbK_write (w b : Nat) (ib : Fin 2) (K : Fin 16 → Fin 64 → Prop)
    (wb : Buf (Elt F) ((sWb : Memref sig .scVector .vmem S2x16x64 .f32).view.loc (thr d L)))
    (hK : WbK d L fl tab w b ib K wb) (g : Fin 16) (i : Fin 4)
    (off : Fin 3 → Nat) (hoff : off = ![ib.val, g.val, 16 * i.val])
    (inb : ∀ a, off a + S1x1x16.size a ≤ S2x16x64.size a) (P : S1x1x16.Idx → Elt F .f32)
    (hP : ∀ x : S1x1x16.Idx, P x = Spec.bagPartial fl tab (128 * w + 16 * b + g.val) (16 * i.val + (x 2).val) 50) :
    WbK d L fl tab w b ib (fun g' c' => K g' c' ∨ (g' = g ∧ 16 * i.val ≤ c'.val ∧ c'.val < 16 * i.val + 16))
      (View.write (Elt F) ((sWb : Memref sig .scVector .vmem S2x16x64 .f32).view.slice (Rect.unit (s := S2x16x64) off S1x1x16.size inb)) wb P Finset.univ) := by
  subst hoff
  intro g' c' hK'
  by_cases hcov : g' = g ∧ 16 * i.val ≤ c'.val ∧ c'.val < 16 * i.val + 16
  · obtain ⟨rfl, hlo, hhi⟩ := hcov
    have hx : ((sWb : Memref sig .scVector .vmem S2x16x64 .f32).view.slice (Rect.unit (s := S2x16x64) ![ib.val, g'.val, 16 * i.val] S1x1x16.size inb)).emb
        (ix3 (0 : Fin 1) (0 : Fin 1) (⟨c'.val - 16 * i.val, by omega⟩ : Fin 16)) = ix3 ib g' c' := by
      funext a; apply Fin.ext
      match a with
      | ⟨0, _⟩ => show ib.val + 1 * 0 = ib.val; omega
      | ⟨1, _⟩ => show g'.val + 1 * 0 = g'.val; omega
      | ⟨2, _⟩ => show 16 * i.val + 1 * (c'.val - 16 * i.val) = c'.val; omega
    rw [← hx, View.write_emb_of_mem _ _ (Finset.mem_univ _), cast_eq, hP]
    congr 1
    show 16 * i.val + (c'.val - 16 * i.val) = c'.val
    omega
  · have hKg : K g' c' := hK'.resolve_right hcov
    rw [← hK g' c' hKg]
    refine View.write_of_not_mem _ _ _ fun hmem => hcov ?_
    obtain ⟨x, -, hx⟩ := Finset.mem_map.mp (show _ ∈ Finset.map _ _ from hmem)
    have h1 := congrArg (fun y : S2x16x64.Idx => (y 1).val) hx
    have h2 := congrArg (fun y : S2x16x64.Idx => (y 2).val) hx
    have hx1 : (x 1).val < 1 := (x 1).isLt
    have hx2 : (x 2).val < 16 := (x 2).isLt
    change g.val + 1 * (x 1).val = g'.val at h1
    change 16 * i.val + 1 * (x 2).val = c'.val at h2
    exact ⟨Fin.ext (by omega), by omega, by omega⟩

/-- A store into the other half leaves a half's known entries. -/
theorem WbK_write_other (w b : Nat) (ib ib' : Fin 2) (hne : ib' ≠ ib) (K : Fin 16 → Fin 64 → Prop)
    (wb : Buf (Elt F) ((sWb : Memref sig .scVector .vmem S2x16x64 .f32).view.loc (thr d L)))
    (hK : WbK d L fl tab w b ib K wb) (off : Fin 3 → Nat) (hoff : off 0 = ib'.val)
    (inb : ∀ a, off a + S1x1x16.size a ≤ S2x16x64.size a) (P : S1x1x16.Idx → Elt F .f32) :
    WbK d L fl tab w b ib K
      (View.write (Elt F) ((sWb : Memref sig .scVector .vmem S2x16x64 .f32).view.slice (Rect.unit (s := S2x16x64) off S1x1x16.size inb)) wb P Finset.univ) := by
  intro g' c' hK'
  rw [← hK g' c' hK']
  refine View.write_of_not_mem _ _ _ fun hmem => hne ?_
  obtain ⟨x, -, hx⟩ := Finset.mem_map.mp (show _ ∈ Finset.map _ _ from hmem)
  have h0 := congrArg (fun y : S2x16x64.Idx => (y 0).val) hx
  have hx0 : (x 0).val < 1 := (x 0).isLt
  change off 0 + 1 * (x 0).val = ib.val at h0
  exact Fin.ext (by omega)

end Tile

end Cert.Proof.BagB
end
-- ==== Proof.TilePairValB.lean ====
/-
  The glue between a pair loop's trip and the value lemmas: the column-offset word the body extracts for a row, the
  accumulators' start, the payload a bag's sums are stored with, and the write-back scratch after a bag's four stores.
-/
import proofs.«203835_g19404662243951_cont_8to1_399_35_alg».proof.Proof.TileAccB
import proofs.«203835_g19404662243951_cont_8to1_399_35_alg».proof.Proof.TileFactsB

noncomputable section

namespace Cert.Proof.BagB
open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem

variable {F : FTy → Type} [FloatOps F]

section Tile

variable (d : Dev nD) (L : grid1.Coords)
variable (fl : IVec Spec.SFlat 32) (tab : FVec F Spec.STab .f32)

/-- Word `m` of a sixteen-word load of the column-offset scratch at offset `off` is word `off + m` of the scratch. -/
theorem rv_extract (g2 : Buf (Elt F) ((sRv : Memref sig .scVector .vmem S2048 .i32).view.loc (thr d L)))
    (off : Fin 1 → Nat) (inb : ∀ a, off a + S16.size a ≤ S2048.size a) (hc : S16.ShapeCasts S16) (m : Nat) (hm : m < 16)
    (hsl : S16.Slices ![m] S1) (hpos : ∀ a, (![0] : Fin 1 → Nat) a < S1.size a) :
    extractAt ![0] (extractStridedSlice S1 ![m] (shapeCast S16
        ((sRv : Memref sig .scVector .vmem S2048 .i32).view.readAt (Elt F) (Rect.unit (s := S2048) off S16.size inb).toLoadRect g2) hc) hsl) hpos
      = g2 (ix1 (⟨off 0 + m, by have h := inb 0; change off 0 + 16 ≤ 2048 at h; omega⟩ : Fin 2048)) := by
  unfold extractAt extractStridedSlice shapeCast
  rw [Shape.reshapeEquiv_self, View.readAt_apply, View.read_apply, cast_eq]
  congr 1
  funext a; apply Fin.ext
  match a with
  | ⟨0, _⟩ => show off 0 + 1 * (m + 0) = off 0 + m; omega

/-- The column-offset word of row `n` of bag `g` of the block in half `h`: the word at `1024 h + 64 g + n`. -/
theorem rv_word (w b h g n : Nat) (hh : h < 2) (hg : g < 16) (hn : n < 64)
    (g2 : Buf (Elt F) ((sRv : Memref sig .scVector .vmem S2048 .i32).view.loc (thr d L)))
    (hV : RvV d L fl w b h g2) (p : Nat) (hp : p = 1024 * h + 64 * g + n) (hlt : p < 2048) :
    g2 (ix1 (⟨p, hlt⟩ : Fin 2048)) = Spec.tcol (blkWord fl w b (64 * g + n)) := by
  subst hp
  have := hV (64 * g + n) (by omega) hh
  rw [← this]
  congr 2
  exact Fin.ext (by show 1024 * h + 64 * g + n = 1024 * h + (64 * g + n); omega)

omit d L in
/-- The accumulators start at zero. -/
theorem acc_zero (w b g i : Nat) :
    (broadcast S16 (FloatOps.ofBits (F := F) .f32 0#32) : FVec F S16 .f32) = AccMath.accVec (rowF fl tab w b g) (offF fl w b g) i 0 := rfl

omit d L in
/-- The sixteen lanes a bag's sums are stored with, from accumulator `i` after the fifty rows. -/
theorem payload_ok (w b g : Nat) (i : Fin 4) (hc : S16.ShapeCasts S1x1x16) (x : S1x1x16.Idx) :
    shapeCast S1x1x16 (AccMath.accVec (rowF fl tab w b g) (offF fl w b g) i.val 50) hc x
      = Spec.bagPartial fl tab (128 * w + 16 * b + g) (16 * i.val + (x 2).val) 50 := by
  have h0 : (x 0).val = 0 := by have : (x 0).val < 1 := (x 0).isLt; omega
  have h1 : (x 1).val = 0 := by have : (x 1).val < 1 := (x 1).isLt; omega
  have h2 : (x 2).val < 16 := (x 2).isLt
  have hre : Shape.reshapeEquiv hc x = ix1 (⟨(x 2).val, h2⟩ : Fin 16) :=
    Shape.reshapeEquiv_eq_of_rowMajor hc (by
      rw [Shape.rowMajor_val_one, Shape.rowMajor_val_three, h0, h1]
      show (x 2).val = (0 * 1 + 0) * 16 + (x 2).val
      omega)
  unfold shapeCast
  rw [hre, acc_final]

/-- The four stores of a bag's sums, sixteen lanes each, add the bag's row to what a half of the write-back scratch is
    known to hold. -/
theorem WbK_bag (w b : Nat) (ib : Fin 2) (K : Fin 16 → Fin 64 → Prop)
    (wb : Buf (Elt F) ((sWb : Memref sig .scVector .vmem S2x16x64 .f32).view.loc (thr d L)))
    (hK : WbK d L fl tab w b ib K wb) (g : Fin 16)
    (o0 o1 o2 o3 : Fin 3 → Nat)
    (h0 : o0 = ![ib.val, g.val, 0]) (h1 : o1 = ![ib.val, g.val, 16]) (h2 : o2 = ![ib.val, g.val, 32]) (h3 : o3 = ![ib.val, g.val, 48])
    (i0 : ∀ a, o0 a + S1x1x16.size a ≤ S2x16x64.size a) (i1 : ∀ a, o1 a + S1x1x16.size a ≤ S2x16x64.size a)
    (i2 : ∀ a, o2 a + S1x1x16.size a ≤ S2x16x64.size a) (i3 : ∀ a, o3 a + S1x1x16.size a ≤ S2x16x64.size a)
    (P0 P1 P2 P3 : S1x1x16.Idx → Elt F .f32)
    (hP0 : ∀ x : S1x1x16.Idx, P0 x = Spec.bagPartial fl tab (128 * w + 16 * b + g.val) (16 * 0 + (x 2).val) 50)
    (hP1 : ∀ x : S1x1x16.Idx, P1 x = Spec.bagPartial fl tab (128 * w + 16 * b + g.val) (16 * 1 + (x 2).val) 50)
    (hP2 : ∀ x : S1x1x16.Idx, P2 x = Spec.bagPartial fl tab (128 * w + 16 * b + g.val) (16 * 2 + (x 2).val) 50)
    (hP3 : ∀ x : S1x1x16.Idx, P3 x = Spec.bagPartial fl tab (128 * w + 16 * b + g.val) (16 * 3 + (x 2).val) 50) :
    WbK d L fl tab w b ib (fun g' c' => K g' c' ∨ g' = g)
      (View.write (Elt F) ((sWb : Memref sig .scVector .vmem S2x16x64 .f32).view.slice (Rect.unit (s := S2x16x64) o3 S1x1x16.size i3))
        (View.write (Elt F) ((sWb : Memref sig .scVector .vmem S2x16x64 .f32).view.slice (Rect.unit (s := S2x16x64) o2 S1x1x16.size i2))
          (View.write (Elt F) ((sWb : Memref sig .scVector .vmem S2x16x64 .f32).view.slice (Rect.unit (s := S2x16x64) o1 S1x1x16.size i1))
            (View.write (Elt F) ((sWb : Memref sig .scVector .vmem S2x16x64 .f32).view.slice (Rect.unit (s := S2x16x64) o0 S1x1x16.size i0)) wb P0 Finset.univ)
            P1 Finset.univ) P2 Finset.univ) P3 Finset.univ) := by
  have k0 := WbK_write d L fl tab w b ib K wb hK g (0 : Fin 4) o0 h0 i0 P0 hP0
  have k1 := WbK_write d L fl tab w b ib _ _ k0 g (1 : Fin 4) o1 h1 i1 P1 hP1
  have k2 := WbK_write d L fl tab w b ib _ _ k1 g (2 : Fin 4) o2 h2 i2 P2 hP2
  have k3 := WbK_write d L fl tab w b ib _ _ k2 g (3 : Fin 4) o3 h3 i3 P3 hP3
  intro g' c' hk
  refine k3 g' c' ?_
  rcases hk with hk | rfl
  · exact .inl (.inl (.inl (.inl hk)))
  · have hc := c'.isLt
    by_cases c0 : c'.val < 16
    · exact .inl (.inl (.inl (.inr ⟨rfl, by show 16 * 0 ≤ c'.val; omega, by show c'.val < 16 * 0 + 16; omega⟩)))
    by_cases c1 : c'.val < 32
    · exact .inl (.inl (.inr ⟨rfl, by show 16 * 1 ≤ c'.val; omega, by show c'.val < 16 * 1 + 16; omega⟩))
    by_cases c2 : c'.val < 48
    · exact .inl (.inr ⟨rfl, by show 16 * 2 ≤ c'.val; omega, by show c'.val < 16 * 2 + 16; omega⟩)
    · exact .inr ⟨rfl, by show 16 * 3 ≤ c'.val; omega, by show c'.val < 16 * 3 + 16; omega⟩

end Tile

end Cert.Proof.BagB
end
-- ==== Proof.TilePair0aB.lean ====
/-
  One trip of an even block's pair loop on a vector subcore: from what holds before trip `k` to what holds before trip
  `k + 1`.

  The trip waits for the gather of bag `2 k` into slot 0, starts the gather of bag `2 k + 1` into slot 1, sums bag `2 k`'s fifty
  rows (three groups of sixteen and two more, each row read at its column offset in four sixteen-lane pieces) into the
  write-back scratch, waits for the second gather, starts the gather of bag `2 k + 2` into slot 0 — for the last trip, of the
  next block's first bag —, and sums bag `2 k + 1`. Each wait is admissible under what the subcore owes the launch; each
  gather's list lies in range by `TixB`; each extracted column offset passes the body's check by `RvB`.
-/
import proofs.«203835_g19404662243951_cont_8to1_399_35_alg».proof.Proof.TilePreB
import proofs.«203835_g19404662243951_cont_8to1_399_35_alg».proof.Proof.PayB
import proofs.«203835_g19404662243951_cont_8to1_399_35_alg».proof.Proof.TileChkB
import proofs.«203835_g19404662243951_cont_8to1_399_35_alg».proof.Proof.TileMath
import proofs.«203835_g19404662243951_cont_8to1_399_35_alg».proof.Proof.TileInvB
import proofs.«203835_g19404662243951_cont_8to1_399_35_alg».proof.Proof.TilePairValB
import proofs.«203835_g19404662243951_cont_8to1_399_35_alg».proof.Proof.Gen.Kernel.Skeleton
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Lean Elab Tactic Meta in
/-- Reads the printed check at the head of the goal off its name and applies that check's lemma, leaving the word's fact. -/
elab "chk_disch" : tactic => withMainContext do
  let g ← getMainGoal
  let t ← instantiateMVars (← g.getType)
  let .const n _ := t.getAppFn | throwError "chk_disch: not a check"
  let .str _ last := n | throwError "chk_disch: not a check"
  unless last.startsWith "k1_chk" do throwError "chk_disch: not a check"
  let idx := last.drop 6
  let lem : Name := `Cert.Proof.TileChkB ++ Name.mkSimple ("chk" ++ idx)
  evalTactic (← `(tactic| first | (refine $(mkIdent lem) ?_) | (refine $(mkIdent lem) _ ?_)))

variable {F : FTy → Type} [FloatOps F]

local notation "𝕄" => MT nD τ sig (HIx 1) (Elt F) ℕ UU ℕ

section Tile

variable (d : Dev nD) (L : grid1.Coords)

set_option maxHeartbeats 0 in
theorem pair0_lt (fl : IVec Spec.SFlat 32) (qt : PosShare TreeShare) (tab : FVec F Spec.STab .f32) (O : CellTallies nD τ sig (HIx 1))
    (W0 : Waits sig (HIx 1)) (v2 v3 : BitVec 32) (t1 : Fin k1_t1_loop.trips) (v1385 : BitVec 32) (k : Fin k1_t2_loop.trips) (hk : k.val < 7) :
    inv0 d L fl qt tab O W0 (2 * t1.val) k.val ⟨⟩
      ⊢ wp frame (wpE (defs₀ (F := F)) 𝒱₀ (thr d L) none) Set.univ
          (k1_t2_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10 v2 v3 0#32 1#32 t1 v1385 k ⟨⟩)
          (inv0 d L fl qt tab O W0 (2 * t1.val) (k.val + 1)) := by
  unfold k1_t2_body
  unfold inv0
  iintro ⟨#Hmw', %r, %g1, %g2, %wb, %o, %ho, ⟨%hT, %hR, %ho_eq, %hV⟩, Hg0, H1, Ht, H3, H2, H4, Hg1, %W', %hW', HO⟩
  have hin := hin_of d L g1 hT
  have h4 := cond4_lt k hk
  have h5 := cond5_lt t1 k hk
  sl_exec_parts (disch := first | decide | (chk_disch; exact hR _))
  sl_unroll
  sl_exec_parts (disch := first | decide | (chk_disch; exact hR _))
  sl_unroll
  sl_exec_parts (disch := first | decide | (chk_disch; exact hR _))
  sl_step
  have hmin : min (128 * (k.val + 1)) 1024 = 128 * k.val + 128 := by omega
  have hoff : k1_off33 k = lo (k.val + 1) := by rw [k1_off33_eq]; unfold lo; rw [hmin]
  isplitl []; · iexact Hmw'
  iexists _; iexists g1; iexists g2; iexists _; iexists (k1_off33 k); iexists (k1_off33_inb k h4)
  isplitr; rotate_left
  · isplitl [Hg0]; · iexact Hg0
    isplitl [H1]; · iexact H1
    isplitl [Ht]; · iexact Ht
    isplitl [H3]; · iexact H3
    isplitl [H2]; · iexact H2
    isplitl [H4]; · iexact H4
    isplitl [Hg1]; · iexact Hg1
    iexists (insert (SemLoc.dma cc1_scratch6.sem, (default : HIx 1)) (insert (SemLoc.dma cc1_scratch5.sem, (default : HIx 1)) W')); isplitr
    · ipureintro; intro p hp
      rcases Finset.mem_insert.mp hp with rfl | hp
      · exact .inr rfl
      rcases Finset.mem_insert.mp hp with rfl | hp
      · exact .inr rfl
      · exact hW' p hp
    · iexact HO
  · ipureintro
    refine ⟨hT, hR, hoff, ?_⟩
    obtain ⟨hT0, hV0, hT1, hV1, hRows, hWb⟩ := hV
    have hk8 : k.val < 8 := lt_of_lt_of_eq k.isLt (by decide)
    have hc16 : S1x1x16.ShapeCasts S16 := by decide
    have hc1 : S16.ShapeCasts S1x1x16 := by decide
    have hRA : ∀ pay : S50x128.Idx → Elt F .f32, RowsV d L fl tab (wL L).val (2 * t1.val) (2 * k.val) 0 (View.write (Elt F) (h1M).view r pay Finset.univ) :=
      fun pay => RowsV_keep0 d L fl tab (wL L).val (2 * t1.val) (2 * k.val) r pay hRows
    have hwB := words_of_TixV d L fl (wL L).val (2 * t1.val) 0 (2 * k.val + 1) (by decide) (by omega) g1 hT0 (k1_off7 k)
      (by rw [k1_off7_eq]; show 128 * k.val + 64 = 1024 * 0 + 64 * (2 * k.val + 1); omega)
    have hRB0 := RowsV_landing1 d L fl tab (by decide) (wL L).val (2 * t1.val) (2 * k.val + 1) g1 (k1_off7 k) (k1_off7_inb k) hwB (hin _ _) r
    have hRB := fun pay : S50x128.Idx → Elt F .f32 => RowsV_keep1 d L fl tab (wL L).val (2 * t1.val) (2 * k.val + 1) _ pay hRB0
    have hwA_0 : pair0_lt.sl.v1667 d L k g2 = Spec.tcol (blkWord fl (wL L).val (2 * t1.val) (64 * (2 * k.val) + 0)) := by
      refine (rv_extract d L g2 (k1_off8 k ⟨0, by decide⟩) (k1_off8_inb k ⟨0, by decide⟩) (by decide) 0 (by decide) (by decide) (by decide)).trans ?_
      exact rv_word d L fl (wL L).val (2 * t1.val) 0 (2 * k.val) 0 (by decide) (by omega) (by decide) g2 hV0 _
        (by rw [k1_off8_eq k ⟨0, by decide⟩]; show 128 * k.val + 16 * 0 + 0 = 1024 * 0 + 64 * (2 * k.val) + 0; omega) _
    have hwA_1 : pair0_lt.sl.v1703 d L k g2 = Spec.tcol (blkWord fl (wL L).val (2 * t1.val) (64 * (2 * k.val) + 1)) := by
      refine (rv_extract d L g2 (k1_off8 k ⟨0, by decide⟩) (k1_off8_inb k ⟨0, by decide⟩) (by decide) 1 (by decide) (by decide) (by decide)).trans ?_
      exact rv_word d L fl (wL L).val (2 * t1.val) 0 (2 * k.val) 1 (by decide) (by omega) (by decide) g2 hV0 _
        (by rw [k1_off8_eq k ⟨0, by decide⟩]; show 128 * k.val + 16 * 0 + 1 = 1024 * 0 + 64 * (2 * k.val) + 1; omega) _
    have hwA_2 : pair0_lt.sl.v1739 d L k g2 = Spec.tcol (blkWord fl (wL L).val (2 * t1.val) (64 * (2 * k.val) + 2)) := by
      refine (rv_extract d L g2 (k1_off8 k ⟨0, by decide⟩) (k1_off8_inb k ⟨0, by decide⟩) (by decide) 2 (by decide) (by decide) (by decide)).trans ?_
      exact rv_word d L fl (wL L).val (2 * t1.val) 0 (2 * k.val) 2 (by decide) (by omega) (by decide) g2 hV0 _
        (by rw [k1_off8_eq k ⟨0, by decide⟩]; show 128 * k.val + 16 * 0 + 2 = 1024 * 0 + 64 * (2 * k.val) + 2; omega) _
    have hwA_3 : pair0_lt.sl.v1775 d L k g2 = Spec.tcol (blkWord fl (wL L).val (2 * t1.val) (64 * (2 * k.val) + 3)) := by
      refine (rv_extract d L g2 (k1_off8 k ⟨0, by decide⟩) (k1_off8_inb k ⟨0, by decide⟩) (by decide) 3 (by decide) (by decide) (by decide)).trans ?_
      exact rv_word d L fl (wL L).val (2 * t1.val) 0 (2 * k.val) 3 (by decide) (by omega) (by decide) g2 hV0 _
        (by rw [k1_off8_eq k ⟨0, by decide⟩]; show 128 * k.val + 16 * 0 + 3 = 1024 * 0 + 64 * (2 * k.val) + 3; omega) _
    have hwA_4 : pair0_lt.sl.v1811 d L k g2 = Spec.tcol (blkWord fl (wL L).val (2 * t1.val) (64 * (2 * k.val) + 4)) := by
      refine (rv_extract d L g2 (k1_off8 k ⟨0, by decide⟩) (k1_off8_inb k ⟨0, by decide⟩) (by decide) 4 (by decide) (by decide) (by decide)).trans ?_
      exact rv_word d L fl (wL L).val (2 * t1.val) 0 (2 * k.val) 4 (by decide) (by omega) (by decide) g2 hV0 _
        (by rw [k1_off8_eq k ⟨0, by decide⟩]; show 128 * k.val + 16 * 0 + 4 = 1024 * 0 + 64 * (2 * k.val) + 4; omega) _
    have hwA_5 : pair0_lt.sl.v1847 d L k g2 = Spec.tcol (blkWord fl (wL L).val (2 * t1.val) (64 * (2 * k.val) + 5)) := by
      refine (rv_extract d L g2 (k1_off8 k ⟨0, by decide⟩) (k1_off8_inb k ⟨0, by decide⟩) (by decide) 5 (by decide) (by decide) (by decide)).trans ?_
      exact rv_word d L fl (wL L).val (2 * t1.val) 0 (2 * k.val) 5 (by decide) (by omega) (by decide) g2 hV0 _
        (by rw [k1_off8_eq k ⟨0, by decide⟩]; show 128 * k.val + 16 * 0 + 5 = 1024 * 0 + 64 * (2 * k.val) + 5; omega) _
    have hwA_6 : pair0_lt.sl.v1883 d L k g2 = Spec.tcol (blkWord fl (wL L).val (2 * t1.val) (64 * (2 * k.val) + 6)) := by
      refine (rv_extract d L g2 (k1_off8 k ⟨0, by decide⟩) (k1_off8_inb k ⟨0, by decide⟩) (by decide) 6 (by decide) (by decide) (by decide)).trans ?_
      exact rv_word d L fl (wL L).val (2 * t1.val) 0 (2 * k.val) 6 (by decide) (by omega) (by decide) g2 hV0 _
        (by rw [k1_off8_eq k ⟨0, by decide⟩]; show 128 * k.val + 16 * 0 + 6 = 1024 * 0 + 64 * (2 * k.val) + 6; omega) _
    have hwA_7 : pair0_lt.sl.v1919 d L k g2 = Spec.tcol (blkWord fl (wL L).val (2 * t1.val) (64 * (2 * k.val) + 7)) := by
      refine (rv_extract d L g2 (k1_off8 k ⟨0, by decide⟩) (k1_off8_inb k ⟨0, by decide⟩) (by decide) 7 (by decide) (by decide) (by decide)).trans ?_
      exact rv_word d L fl (wL L).val (2 * t1.val) 0 (2 * k.val) 7 (by decide) (by omega) (by decide) g2 hV0 _
        (by rw [k1_off8_eq k ⟨0, by decide⟩]; show 128 * k.val + 16 * 0 + 7 = 1024 * 0 + 64 * (2 * k.val) + 7; omega) _
    have hwA_8 : pair0_lt.sl.v1955 d L k g2 = Spec.tcol (blkWord fl (wL L).val (2 * t1.val) (64 * (2 * k.val) + 8)) := by
      refine (rv_extract d L g2 (k1_off8 k ⟨0, by decide⟩) (k1_off8_inb k ⟨0, by decide⟩) (by decide) 8 (by decide) (by decide) (by decide)).trans ?_
      exact rv_word d L fl (wL L).val (2 * t1.val) 0 (2 * k.val) 8 (by decide) (by omega) (by decide) g2 hV0 _
        (by rw [k1_off8_eq k ⟨0, by decide⟩]; show 128 * k.val + 16 * 0 + 8 = 1024 * 0 + 64 * (2 * k.val) + 8; omega) _
    have hwA_9 : pair0_lt.sl.v1991 d L k g2 = Spec.tcol (blkWord fl (wL L).val (2 * t1.val) (64 * (2 * k.val) + 9)) := by
      refine (rv_extract d L g2 (k1_off8 k ⟨0, by decide⟩) (k1_off8_inb k ⟨0, by decide⟩) (by decide) 9 (by decide) (by decide) (by decide)).trans ?_
      exact rv_word d L fl (wL L).val (2 * t1.val) 0 (2 * k.val) 9 (by decide) (by omega) (by decide) g2 hV0 _
        (by rw [k1_off8_eq k ⟨0, by decide⟩]; show 128 * k.val + 16 * 0 + 9 = 1024 * 0 + 64 * (2 * k.val) + 9; omega) _
    have hwA_10 : pair0_lt.sl.v2027 d L k g2 = Spec.tcol (blkWord fl (wL L).val (2 * t1.val) (64 * (2 * k.val) + 10)) := by
      refine (rv_extract d L g2 (k1_off8 k ⟨0, by decide⟩) (k1_off8_inb k ⟨0, by decide⟩) (by decide) 10 (by decide) (by decide) (by decide)).trans ?_
      exact rv_word d L fl (wL L).val (2 * t1.val) 0 (2 * k.val) 10 (by decide) (by omega) (by decide) g2 hV0 _
        (by rw [k1_off8_eq k ⟨0, by decide⟩]; show 128 * k.val + 16 * 0 + 10 = 1024 * 0 + 64 * (2 * k.val) + 10; omega) _
    have hwA_11 : pair0_lt.sl.v2063 d L k g2 = Spec.tcol (blkWord fl (wL L).val (2 * t1.val) (64 * (2 * k.val) + 11)) := by
      refine (rv_extract d L g2 (k1_off8 k ⟨0, by decide⟩) (k1_off8_inb k ⟨0, by decide⟩) (by decide) 11 (by decide) (by decide) (by decide)).trans ?_
      exact rv_word d L fl (wL L).val (2 * t1.val) 0 (2 * k.val) 11 (by decide) (by omega) (by decide) g2 hV0 _
        (by rw [k1_off8_eq k ⟨0, by decide⟩]; show 128 * k.val + 16 * 0 + 11 = 1024 * 0 + 64 * (2 * k.val) + 11; omega) _
    have hwA_12 : pair0_lt.sl.v2099 d L k g2 = Spec.tcol (blkWord fl (wL L).val (2 * t1.val) (64 * (2 * k.val) + 12)) := by
      refine (rv_extract d L g2 (k1_off8 k ⟨0, by decide⟩) (k1_off8_inb k ⟨0, by decide⟩) (by decide) 12 (by decide) (by decide) (by decide)).trans ?_
      exact rv_word d L fl (wL L).val (2 * t1.val) 0 (2 * k.val) 12 (by decide) (by omega) (by decide) g2 hV0 _
        (by rw [k1_off8_eq k ⟨0, by decide⟩]; show 128 * k.val + 16 * 0 + 12 = 1024 * 0 + 64 * (2 * k.val) + 12; omega) _
    have hwA_13 : pair0_lt.sl.v2135 d L k g2 = Spec.tcol (blkWord fl (wL L).val (2 * t1.val) (64 * (2 * k.val) + 13)) := by
      refine (rv_extract d L g2 (k1_off8 k ⟨0, by decide⟩) (k1_off8_inb k ⟨0, by decide⟩) (by decide) 13 (by decide) (by decide) (by decide)).trans ?_
      exact rv_word d L fl (wL L).val (2 * t1.val) 0 (2 * k.val) 13 (by decide) (by omega) (by decide) g2 hV0 _
        (by rw [k1_off8_eq k ⟨0, by decide⟩]; show 128 * k.val + 16 * 0 + 13 = 1024 * 0 + 64 * (2 * k.val) + 13; omega) _
    have hwA_14 : pair0_lt.sl.v2171 d L k g2 = Spec.tcol (blkWord fl (wL L).val (2 * t1.val) (64 * (2 * k.val) + 14)) := by
      refine (rv_extract d L g2 (k1_off8 k ⟨0, by decide⟩) (k1_off8_inb k ⟨0, by decide⟩) (by decide) 14 (by decide) (by decide) (by decide)).trans ?_
      exact rv_word d L fl (wL L).val (2 * t1.val) 0 (2 * k.val) 14 (by decide) (by omega) (by decide) g2 hV0 _
        (by rw [k1_off8_eq k ⟨0, by decide⟩]; show 128 * k.val + 16 * 0 + 14 = 1024 * 0 + 64 * (2 * k.val) + 14; omega) _
    have hwA_15 : pair0_lt.sl.v2207 d L k g2 = Spec.tcol (blkWord fl (wL L).val (2 * t1.val) (64 * (2 * k.val) + 15)) := by
      refine (rv_extract d L g2 (k1_off8 k ⟨0, by decide⟩) (k1_off8_inb k ⟨0, by decide⟩) (by decide) 15 (by decide) (by decide) (by decide)).trans ?_
      exact rv_word d L fl (wL L).val (2 * t1.val) 0 (2 * k.val) 15 (by decide) (by omega) (by decide) g2 hV0 _
        (by rw [k1_off8_eq k ⟨0, by decide⟩]; show 128 * k.val + 16 * 0 + 15 = 1024 * 0 + 64 * (2 * k.val) + 15; omega) _
    have hwA_16 : pair0_lt.sl.v1667_1 d L k g2 = Spec.tcol (blkWord fl (wL L).val (2 * t1.val) (64 * (2 * k.val) + 16)) := by
      refine (rv_extract d L g2 (k1_off8 k ⟨1, by decide⟩) (k1_off8_inb k ⟨1, by decide⟩) (by decide) 0 (by decide) (by decide) (by decide)).trans ?_
      exact rv_word d L fl (wL L).val (2 * t1.val) 0 (2 * k.val) 16 (by decide) (by omega) (by decide) g2 hV0 _
        (by rw [k1_off8_eq k ⟨1, by decide⟩]; show 128 * k.val + 16 * 1 + 0 = 1024 * 0 + 64 * (2 * k.val) + 16; omega) _
    have hwA_17 : pair0_lt.sl.v1703_1 d L k g2 = Spec.tcol (blkWord fl (wL L).val (2 * t1.val) (64 * (2 * k.val) + 17)) := by
      refine (rv_extract d L g2 (k1_off8 k ⟨1, by decide⟩) (k1_off8_inb k ⟨1, by decide⟩) (by decide) 1 (by decide) (by decide) (by decide)).trans ?_
      exact rv_word d L fl (wL L).val (2 * t1.val) 0 (2 * k.val) 17 (by decide) (by omega) (by decide) g2 hV0 _
        (by rw [k1_off8_eq k ⟨1, by decide⟩]; show 128 * k.val + 16 * 1 + 1 = 1024 * 0 + 64 * (2 * k.val) + 17; omega) _
    have hwA_18 : pair0_lt.sl.v1739_1 d L k g2 = Spec.tcol (blkWord fl (wL L).val (2 * t1.val) (64 * (2 * k.val) + 18)) := by
      refine (rv_extract d L g2 (k1_off8 k ⟨1, by decide⟩) (k1_off8_inb k ⟨1, by decide⟩) (by decide) 2 (by decide) (by decide) (by decide)).trans ?_
      exact rv_word d L fl (wL L).val (2 * t1.val) 0 (2 * k.val) 18 (by decide) (by omega) (by decide) g2 hV0 _
        (by rw [k1_off8_eq k ⟨1, by decide⟩]; show 128 * k.val + 16 * 1 + 2 = 1024 * 0 + 64 * (2 * k.val) + 18; omega) _
    have hwA_19 : pair0_lt.sl.v1775_1 d L k g2 = Spec.tcol (blkWord fl (wL L).val (2 * t1.val) (64 * (2 * k.val) + 19)) := by
      refine (rv_extract d L g2 (k1_off8 k ⟨1, by decide⟩) (k1_off8_inb k ⟨1, by decide⟩) (by decide) 3 (by decide) (by decide) (by decide)).trans ?_
      exact rv_word d L fl (wL L).val (2 * t1.val) 0 (2 * k.val) 19 (by decide) (by omega) (by decide) g2 hV0 _
        (by rw [k1_off8_eq k ⟨1, by decide⟩]; show 128 * k.val + 16 * 1 + 3 = 1024 * 0 + 64 * (2 * k.val) + 19; omega) _
    have hwA_20 : pair0_lt.sl.v1811_1 d L k g2 = Spec.tcol (blkWord fl (wL L).val (2 * t1.val) (64 * (2 * k.val) + 20)) := by
      refine (rv_extract d L g2 (k1_off8 k ⟨1, by decide⟩) (k1_off8_inb k ⟨1, by decide⟩) (by decide) 4 (by decide) (by decide) (by decide)).trans ?_
      exact rv_word d L fl (wL L).val (2 * t1.val) 0 (2 * k.val) 20 (by decide) (by omega) (by decide) g2 hV0 _
        (by rw [k1_off8_eq k ⟨1, by decide⟩]; show 128 * k.val + 16 * 1 + 4 = 1024 * 0 + 64 * (2 * k.val) + 20; omega) _
    have hwA_21 : pair0_lt.sl.v1847_1 d L k g2 = Spec.tcol (blkWord fl (wL L).val (2 * t1.val) (64 * (2 * k.val) + 21)) := by
      refine (rv_extract d L g2 (k1_off8 k ⟨1, by decide⟩) (k1_off8_inb k ⟨1, by decide⟩) (by decide) 5 (by decide) (by decide) (by decide)).trans ?_
      exact rv_word d L fl (wL L).val (2 * t1.val) 0 (2 * k.val) 21 (by decide) (by omega) (by decide) g2 hV0 _
        (by rw [k1_off8_eq k ⟨1, by decide⟩]; show 128 * k.val + 16 * 1 + 5 = 1024 * 0 + 64 * (2 * k.val) + 21; omega) _
    have hwA_22 : pair0_lt.sl.v1883_1 d L k g2 = Spec.tcol (blkWord fl (wL L).val (2 * t1.val) (64 * (2 * k.val) + 22)) := by
      refine (rv_extract d L g2 (k1_off8 k ⟨1, by decide⟩) (k1_off8_inb k ⟨1, by decide⟩) (by decide) 6 (by decide) (by decide) (by decide)).trans ?_
      exact rv_word d L fl (wL L).val (2 * t1.val) 0 (2 * k.val) 22 (by decide) (by omega) (by decide) g2 hV0 _
        (by rw [k1_off8_eq k ⟨1, by decide⟩]; show 128 * k.val + 16 * 1 + 6 = 1024 * 0 + 64 * (2 * k.val) + 22; omega) _
    have hwA_23 : pair0_lt.sl.v1919_1 d L k g2 = Spec.tcol (blkWord fl (wL L).val (2 * t1.val) (64 * (2 * k.val) + 23)) := by
      refine (rv_extract d L g2 (k1_off8 k ⟨1, by decide⟩) (k1_off8_inb k ⟨1, by decide⟩) (by decide) 7 (by decide) (by decide) (by decide)).trans ?_
      exact rv_word d L fl (wL L).val (2 * t1.val) 0 (2 * k.val) 23 (by decide) (by omega) (by decide) g2 hV0 _
        (by rw [k1_off8_eq k ⟨1, by decide⟩]; show 128 * k.val + 16 * 1 + 7 = 1024 * 0 + 64 * (2 * k.val) + 23; omega) _
    have hwA_24 : pair0_lt.sl.v1955_1 d L k g2 = Spec.tcol (blkWord fl (wL L).val (2 * t1.val) (64 * (2 * k.val) + 24)) := by
      refine (rv_extract d L g2 (k1_off8 k ⟨1, by decide⟩) (k1_off8_inb k ⟨1, by decide⟩) (by decide) 8 (by decide) (by decide) (by decide)).trans ?_
      exact rv_word d L fl (wL L).val (2 * t1.val) 0 (2 * k.val) 24 (by decide) (by omega) (by decide) g2 hV0 _
        (by rw [k1_off8_eq k ⟨1, by decide⟩]; show 128 * k.val + 16 * 1 + 8 = 1024 * 0 + 64 * (2 * k.val) + 24; omega) _
    have hwA_25 : pair0_lt.sl.v1991_1 d L k g2 = Spec.tcol (blkWord fl (wL L).val (2 * t1.val) (64 * (2 * k.val) + 25)) := by
      refine (rv_extract d L g2 (k1_off8 k ⟨1, by decide⟩) (k1_off8_inb k ⟨1, by decide⟩) (by decide) 9 (by decide) (by decide) (by decide)).trans ?_
      exact rv_word d L fl (wL L).val (2 * t1.val) 0 (2 * k.val) 25 (by decide) (by omega) (by decide) g2 hV0 _
        (by rw [k1_off8_eq k ⟨1, by decide⟩]; show 128 * k.val + 16 * 1 + 9 = 1024 * 0 + 64 * (2 * k.val) + 25; omega) _
    have hwA_26 : pair0_lt.sl.v2027_1 d L k g2 = Spec.tcol (blkWord fl (wL L).val (2 * t1.val) (64 * (2 * k.val) + 26)) := by
      refine (rv_extract d L g2 (k1_off8 k ⟨1, by decide⟩) (k1_off8_inb k ⟨1, by decide⟩) (by decide) 10 (by decide) (by decide) (by decide)).trans ?_
      exact rv_word d L fl (wL L).val (2 * t1.val) 0 (2 * k.val) 26 (by decide) (by omega) (by decide) g2 hV0 _
        (by rw [k1_off8_eq k ⟨1, by decide⟩]; show 128 * k.val + 16 * 1 + 10 = 1024 * 0 + 64 * (2 * k.val) + 26; omega) _
    have hwA_27 : pair0_lt.sl.v2063_1 d L k g2 = Spec.tcol (blkWord fl (wL L).val (2 * t1.val) (64 * (2 * k.val) + 27)) := by
      refine (rv_extract d L g2 (k1_off8 k ⟨1, by decide⟩) (k1_off8_inb k ⟨1, by decide⟩) (by decide) 11 (by decide) (by decide) (by decide)).trans ?_
      exact rv_word d L fl (wL L).val (2 * t1.val) 0 (2 * k.val) 27 (by decide) (by omega) (by decide) g2 hV0 _
        (by rw [k1_off8_eq k ⟨1, by decide⟩]; show 128 * k.val + 16 * 1 + 11 = 1024 * 0 + 64 * (2 * k.val) + 27; omega) _
    have hwA_28 : pair0_lt.sl.v2099_1 d L k g2 = Spec.tcol (blkWord fl (wL L).val (2 * t1.val) (64 * (2 * k.val) + 28)) := by
      refine (rv_extract d L g2 (k1_off8 k ⟨1, by decide⟩) (k1_off8_inb k ⟨1, by decide⟩) (by decide) 12 (by decide) (by decide) (by decide)).trans ?_
      exact rv_word d L fl (wL L).val (2 * t1.val) 0 (2 * k.val) 28 (by decide) (by omega) (by decide) g2 hV0 _
        (by rw [k1_off8_eq k ⟨1, by decide⟩]; show 128 * k.val + 16 * 1 + 12 = 1024 * 0 + 64 * (2 * k.val) + 28; omega) _
    have hwA_29 : pair0_lt.sl.v2135_1 d L k g2 = Spec.tcol (blkWord fl (wL L).val (2 * t1.val) (64 * (2 * k.val) + 29)) := by
      refine (rv_extract d L g2 (k1_off8 k ⟨1, by decide⟩) (k1_off8_inb k ⟨1, by decide⟩) (by decide) 13 (by decide) (by decide) (by decide)).trans ?_
      exact rv_word d L fl (wL L).val (2 * t1.val) 0 (2 * k.val) 29 (by decide) (by omega) (by decide) g2 hV0 _
        (by rw [k1_off8_eq k ⟨1, by decide⟩]; show 128 * k.val + 16 * 1 + 13 = 1024 * 0 + 64 * (2 * k.val) + 29; omega) _
    have hwA_30 : pair0_lt.sl.v2171_1 d L k g2 = Spec.tcol (blkWord fl (wL L).val (2 * t1.val) (64 * (2 * k.val) + 30)) := by
      refine (rv_extract d L g2 (k1_off8 k ⟨1, by decide⟩) (k1_off8_inb k ⟨1, by decide⟩) (by decide) 14 (by decide) (by decide) (by decide)).trans ?_
      exact rv_word d L fl (wL L).val (2 * t1.val) 0 (2 * k.val) 30 (by decide) (by omega) (by decide) g2 hV0 _
        (by rw [k1_off8_eq k ⟨1, by decide⟩]; show 128 * k.val + 16 * 1 + 14 = 1024 * 0 + 64 * (2 * k.val) + 30; omega) _
    have hwA_31 : pair0_lt.sl.v2207_1 d L k g2 = Spec.tcol (blkWord fl (wL L).val (2 * t1.val) (64 * (2 * k.val) + 31)) := by
      refine (rv_extract d L g2 (k1_off8 k ⟨1, by decide⟩) (k1_off8_inb k ⟨1, by decide⟩) (by decide) 15 (by decide) (by decide) (by decide)).trans ?_
      exact rv_word d L fl (wL L).val (2 * t1.val) 0 (2 * k.val) 31 (by decide) (by omega) (by decide) g2 hV0 _
        (by rw [k1_off8_eq k ⟨1, by decide⟩]; show 128 * k.val + 16 * 1 + 15 = 1024 * 0 + 64 * (2 * k.val) + 31; omega) _
    have hwA_32 : pair0_lt.sl.v1667_2 d L k g2 = Spec.tcol (blkWord fl (wL L).val (2 * t1.val) (64 * (2 * k.val) + 32)) := by
      refine (rv_extract d L g2 (k1_off8 k ⟨2, by decide⟩) (k1_off8_inb k ⟨2, by decide⟩) (by decide) 0 (by decide) (by decide) (by decide)).trans ?_
      exact rv_word d L fl (wL L).val (2 * t1.val) 0 (2 * k.val) 32 (by decide) (by omega) (by decide) g2 hV0 _
        (by rw [k1_off8_eq k ⟨2, by decide⟩]; show 128 * k.val + 16 * 2 + 0 = 1024 * 0 + 64 * (2 * k.val) + 32; omega) _
    have hwA_33 : pair0_lt.sl.v1703_2 d L k g2 = Spec.tcol (blkWord fl (wL L).val (2 * t1.val) (64 * (2 * k.val) + 33)) := by
      refine (rv_extract d L g2 (k1_off8 k ⟨2, by decide⟩) (k1_off8_inb k ⟨2, by decide⟩) (by decide) 1 (by decide) (by decide) (by decide)).trans ?_
      exact rv_word d L fl (wL L).val (2 * t1.val) 0 (2 * k.val) 33 (by decide) (by omega) (by decide) g2 hV0 _
        (by rw [k1_off8_eq k ⟨2, by decide⟩]; show 128 * k.val + 16 * 2 + 1 = 1024 * 0 + 64 * (2 * k.val) + 33; omega) _
    have hwA_34 : pair0_lt.sl.v1739_2 d L k g2 = Spec.tcol (blkWord fl (wL L).val (2 * t1.val) (64 * (2 * k.val) + 34)) := by
      refine (rv_extract d L g2 (k1_off8 k ⟨2, by decide⟩) (k1_off8_inb k ⟨2, by decide⟩) (by decide) 2 (by decide) (by decide) (by decide)).trans ?_
      exact rv_word d L fl (wL L).val (2 * t1.val) 0 (2 * k.val) 34 (by decide) (by omega) (by decide) g2 hV0 _
        (by rw [k1_off8_eq k ⟨2, by decide⟩]; show 128 * k.val + 16 * 2 + 2 = 1024 * 0 + 64 * (2 * k.val) + 34; omega) _
    have hwA_35 : pair0_lt.sl.v1775_2 d L k g2 = Spec.tcol (blkWord fl (wL L).val (2 * t1.val) (64 * (2 * k.val) + 35)) := by
      refine (rv_extract d L g2 (k1_off8 k ⟨2, by decide⟩) (k1_off8_inb k ⟨2, by decide⟩) (by decide) 3 (by decide) (by decide) (by decide)).trans ?_
      exact rv_word d L fl (wL L).val (2 * t1.val) 0 (2 * k.val) 35 (by decide) (by omega) (by decide) g2 hV0 _
        (by rw [k1_off8_eq k ⟨2, by decide⟩]; show 128 * k.val + 16 * 2 + 3 = 1024 * 0 + 64 * (2 * k.val) + 35; omega) _
    have hwA_36 : pair0_lt.sl.v1811_2 d L k g2 = Spec.tcol (blkWord fl (wL L).val (2 * t1.val) (64 * (2 * k.val) + 36)) := by
      refine (rv_extract d L g2 (k1_off8 k ⟨2, by decide⟩) (k1_off8_inb k ⟨2, by decide⟩) (by decide) 4 (by decide) (by decide) (by decide)).trans ?_
      exact rv_word d L fl (wL L).val (2 * t1.val) 0 (2 * k.val) 36 (by decide) (by omega) (by decide) g2 hV0 _
        (by rw [k1_off8_eq k ⟨2, by decide⟩]; show 128 * k.val + 16 * 2 + 4 = 1024 * 0 + 64 * (2 * k.val) + 36; omega) _
    have hwA_37 : pair0_lt.sl.v1847_2 d L k g2 = Spec.tcol (blkWord fl (wL L).val (2 * t1.val) (64 * (2 * k.val) + 37)) := by
      refine (rv_extract d L g2 (k1_off8 k ⟨2, by decide⟩) (k1_off8_inb k ⟨2, by decide⟩) (by decide) 5 (by decide) (by decide) (by decide)).trans ?_
      exact rv_word d L fl (wL L).val (2 * t1.val) 0 (2 * k.val) 37 (by decide) (by omega) (by decide) g2 hV0 _
        (by rw [k1_off8_eq k ⟨2, by decide⟩]; show 128 * k.val + 16 * 2 + 5 = 1024 * 0 + 64 * (2 * k.val) + 37; omega) _
    have hwA_38 : pair0_lt.sl.v1883_2 d L k g2 = Spec.tcol (blkWord fl (wL L).val (2 * t1.val) (64 * (2 * k.val) + 38)) := by
      refine (rv_extract d L g2 (k1_off8 k ⟨2, by decide⟩) (k1_off8_inb k ⟨2, by decide⟩) (by decide) 6 (by decide) (by decide) (by decide)).trans ?_
      exact rv_word d L fl (wL L).val (2 * t1.val) 0 (2 * k.val) 38 (by decide) (by omega) (by decide) g2 hV0 _
        (by rw [k1_off8_eq k ⟨2, by decide⟩]; show 128 * k.val + 16 * 2 + 6 = 1024 * 0 + 64 * (2 * k.val) + 38; omega) _
    have hwA_39 : pair0_lt.sl.v1919_2 d L k g2 = Spec.tcol (blkWord fl (wL L).val (2 * t1.val) (64 * (2 * k.val) + 39)) := by
      refine (rv_extract d L g2 (k1_off8 k ⟨2, by decide⟩) (k1_off8_inb k ⟨2, by decide⟩) (by decide) 7 (by decide) (by decide) (by decide)).trans ?_
      exact rv_word d L fl (wL L).val (2 * t1.val) 0 (2 * k.val) 39 (by decide) (by omega) (by decide) g2 hV0 _
        (by rw [k1_off8_eq k ⟨2, by decide⟩]; show 128 * k.val + 16 * 2 + 7 = 1024 * 0 + 64 * (2 * k.val) + 39; omega) _
    have hwA_40 : pair0_lt.sl.v1955_2 d L k g2 = Spec.tcol (blkWord fl (wL L).val (2 * t1.val) (64 * (2 * k.val) + 40)) := by
      refine (rv_extract d L g2 (k1_off8 k ⟨2, by decide⟩) (k1_off8_inb k ⟨2, by decide⟩) (by decide) 8 (by decide) (by decide) (by decide)).trans ?_
      exact rv_word d L fl (wL L).val (2 * t1.val) 0 (2 * k.val) 40 (by decide) (by omega) (by decide) g2 hV0 _
        (by rw [k1_off8_eq k ⟨2, by decide⟩]; show 128 * k.val + 16 * 2 + 8 = 1024 * 0 + 64 * (2 * k.val) + 40; omega) _
    have hwA_41 : pair0_lt.sl.v1991_2 d L k g2 = Spec.tcol (blkWord fl (wL L).val (2 * t1.val) (64 * (2 * k.val) + 41)) := by
      refine (rv_extract d L g2 (k1_off8 k ⟨2, by decide⟩) (k1_off8_inb k ⟨2, by decide⟩) (by decide) 9 (by decide) (by decide) (by decide)).trans ?_
      exact rv_word d L fl (wL L).val (2 * t1.val) 0 (2 * k.val) 41 (by decide) (by omega) (by decide) g2 hV0 _
        (by rw [k1_off8_eq k ⟨2, by decide⟩]; show 128 * k.val + 16 * 2 + 9 = 1024 * 0 + 64 * (2 * k.val) + 41; omega) _
    have hwA_42 : pair0_lt.sl.v2027_2 d L k g2 = Spec.tcol (blkWord fl (wL L).val (2 * t1.val) (64 * (2 * k.val) + 42)) := by
      refine (rv_extract d L g2 (k1_off8 k ⟨2, by decide⟩) (k1_off8_inb k ⟨2, by decide⟩) (by decide) 10 (by decide) (by decide) (by decide)).trans ?_
      exact rv_word d L fl (wL L).val (2 * t1.val) 0 (2 * k.val) 42 (by decide) (by omega) (by decide) g2 hV0 _
        (by rw [k1_off8_eq k ⟨2, by decide⟩]; show 128 * k.val + 16 * 2 + 10 = 1024 * 0 + 64 * (2 * k.val) + 42; omega) _
    have hwA_43 : pair0_lt.sl.v2063_2 d L k g2 = Spec.tcol (blkWord fl (wL L).val (2 * t1.val) (64 * (2 * k.val) + 43)) := by
      refine (rv_extract d L g2 (k1_off8 k ⟨2, by decide⟩) (k1_off8_inb k ⟨2, by decide⟩) (by decide) 11 (by decide) (by decide) (by decide)).trans ?_
      exact rv_word d L fl (wL L).val (2 * t1.val) 0 (2 * k.val) 43 (by decide) (by omega) (by decide) g2 hV0 _
        (by rw [k1_off8_eq k ⟨2, by decide⟩]; show 128 * k.val + 16 * 2 + 11 = 1024 * 0 + 64 * (2 * k.val) + 43; omega) _
    have hwA_44 : pair0_lt.sl.v2099_2 d L k g2 = Spec.tcol (blkWord fl (wL L).val (2 * t1.val) (64 * (2 * k.val) + 44)) := by
      refine (rv_extract d L g2 (k1_off8 k ⟨2, by decide⟩) (k1_off8_inb k ⟨2, by decide⟩) (by decide) 12 (by decide) (by decide) (by decide)).trans ?_
      exact rv_word d L fl (wL L).val (2 * t1.val) 0 (2 * k.val) 44 (by decide) (by omega) (by decide) g2 hV0 _
        (by rw [k1_off8_eq k ⟨2, by decide⟩]; show 128 * k.val + 16 * 2 + 12 = 1024 * 0 + 64 * (2 * k.val) + 44; omega) _
    have hwA_45 : pair0_lt.sl.v2135_2 d L k g2 = Spec.tcol (blkWord fl (wL L).val (2 * t1.val) (64 * (2 * k.val) + 45)) := by
      refine (rv_extract d L g2 (k1_off8 k ⟨2, by decide⟩) (k1_off8_inb k ⟨2, by decide⟩) (by decide) 13 (by decide) (by decide) (by decide)).trans ?_
      exact rv_word d L fl (wL L).val (2 * t1.val) 0 (2 * k.val) 45 (by decide) (by omega) (by decide) g2 hV0 _
        (by rw [k1_off8_eq k ⟨2, by decide⟩]; show 128 * k.val + 16 * 2 + 13 = 1024 * 0 + 64 * (2 * k.val) + 45; omega) _
    have hwA_46 : pair0_lt.sl.v2171_2 d L k g2 = Spec.tcol (blkWord fl (wL L).val (2 * t1.val) (64 * (2 * k.val) + 46)) := by
      refine (rv_extract d L g2 (k1_off8 k ⟨2, by decide⟩) (k1_off8_inb k ⟨2, by decide⟩) (by decide) 14 (by decide) (by decide) (by decide)).trans ?_
      exact rv_word d L fl (wL L).val (2 * t1.val) 0 (2 * k.val) 46 (by decide) (by omega) (by decide) g2 hV0 _
        (by rw [k1_off8_eq k ⟨2, by decide⟩]; show 128 * k.val + 16 * 2 + 14 = 1024 * 0 + 64 * (2 * k.val) + 46; omega) _
    have hwA_47 : pair0_lt.sl.v2207_2 d L k g2 = Spec.tcol (blkWord fl (wL L).val (2 * t1.val) (64 * (2 * k.val) + 47)) := by
      refine (rv_extract d L g2 (k1_off8 k ⟨2, by decide⟩) (k1_off8_inb k ⟨2, by decide⟩) (by decide) 15 (by decide) (by decide) (by decide)).trans ?_
      exact rv_word d L fl (wL L).val (2 * t1.val) 0 (2 * k.val) 47 (by decide) (by omega) (by decide) g2 hV0 _
        (by rw [k1_off8_eq k ⟨2, by decide⟩]; show 128 * k.val + 16 * 2 + 15 = 1024 * 0 + 64 * (2 * k.val) + 47; omega) _
    have hwA_48 : pair0_lt.sl.v1456 d L k g2 = Spec.tcol (blkWord fl (wL L).val (2 * t1.val) (64 * (2 * k.val) + 48)) := by
      refine (rv_extract d L g2 (k1_off25 k) (k1_off25_inb k) (by decide) 0 (by decide) (by decide) (by decide)).trans ?_
      exact rv_word d L fl (wL L).val (2 * t1.val) 0 (2 * k.val) 48 (by decide) (by omega) (by decide) g2 hV0 _
        (by rw [k1_off25_eq k]; show 128 * k.val + 48 + 0 = 1024 * 0 + 64 * (2 * k.val) + 48; omega) _
    have hwA_49 : pair0_lt.sl.v1490 d L k g2 = Spec.tcol (blkWord fl (wL L).val (2 * t1.val) (64 * (2 * k.val) + 49)) := by
      refine (rv_extract d L g2 (k1_off25 k) (k1_off25_inb k) (by decide) 1 (by decide) (by decide) (by decide)).trans ?_
      exact rv_word d L fl (wL L).val (2 * t1.val) 0 (2 * k.val) 49 (by decide) (by omega) (by decide) g2 hV0 _
        (by rw [k1_off25_eq k]; show 128 * k.val + 48 + 1 = 1024 * 0 + 64 * (2 * k.val) + 49; omega) _
    have sA0_0 : addf (AccMath.accVec (rowF fl tab (wL L).val (2 * t1.val) (2 * k.val)) (offF fl (wL L).val (2 * t1.val) (2 * k.val)) 0 0) (shapeCast S16 (pair0_lt.sl.v1673 d L tab k r g1 g2 hR hin) hc16) = AccMath.accVec (rowF fl tab (wL L).val (2 * t1.val) (2 * k.val)) (offF fl (wL L).val (2 * t1.val) (2 * k.val)) 0 1 :=
      acc_step d L fl tab (wL L).val (2 * t1.val) (2 * k.val) 0 _ (hRA _) ⟨0, by decide⟩ ⟨0, by decide⟩ _ rfl _ hwA_0 _ (k1_off9_form ⟨0, by decide⟩ _ _) _ hc16
    have sA0_1 : addf (AccMath.accVec (rowF fl tab (wL L).val (2 * t1.val) (2 * k.val)) (offF fl (wL L).val (2 * t1.val) (2 * k.val)) 0 1) (shapeCast S16 (pair0_lt.sl.v1709 d L tab k r g1 g2 hR hin) hc16) = AccMath.accVec (rowF fl tab (wL L).val (2 * t1.val) (2 * k.val)) (offF fl (wL L).val (2 * t1.val) (2 * k.val)) 0 2 :=
      acc_step d L fl tab (wL L).val (2 * t1.val) (2 * k.val) 0 _ (hRA _) ⟨1, by decide⟩ ⟨0, by decide⟩ _ rfl _ hwA_1 _ (k1_off10_form ⟨0, by decide⟩ _ _) _ hc16
    have sA0_2 : addf (AccMath.accVec (rowF fl tab (wL L).val (2 * t1.val) (2 * k.val)) (offF fl (wL L).val (2 * t1.val) (2 * k.val)) 0 2) (shapeCast S16 (pair0_lt.sl.v1745 d L tab k r g1 g2 hR hin) hc16) = AccMath.accVec (rowF fl tab (wL L).val (2 * t1.val) (2 * k.val)) (offF fl (wL L).val (2 * t1.val) (2 * k.val)) 0 3 :=
      acc_step d L fl tab (wL L).val (2 * t1.val) (2 * k.val) 0 _ (hRA _) ⟨2, by decide⟩ ⟨0, by decide⟩ _ rfl _ hwA_2 _ (k1_off11_form ⟨0, by decide⟩ _ _) _ hc16
    have sA0_3 : addf (AccMath.accVec (rowF fl tab (wL L).val (2 * t1.val) (2 * k.val)) (offF fl (wL L).val (2 * t1.val) (2 * k.val)) 0 3) (shapeCast S16 (pair0_lt.sl.v1781 d L tab k r g1 g2 hR hin) hc16) = AccMath.accVec (rowF fl tab (wL L).val (2 * t1.val) (2 * k.val)) (offF fl (wL L).val (2 * t1.val) (2 * k.val)) 0 4 :=
      acc_step d L fl tab (wL L).val (2 * t1.val) (2 * k.val) 0 _ (hRA _) ⟨3, by decide⟩ ⟨0, by decide⟩ _ rfl _ hwA_3 _ (k1_off12_form ⟨0, by decide⟩ _ _) _ hc16
    have sA0_4 : addf (AccMath.accVec (rowF fl tab (wL L).val (2 * t1.val) (2 * k.val)) (offF fl (wL L).val (2 * t1.val) (2 * k.val)) 0 4) (shapeCast S16 (pair0_lt.sl.v1817 d L tab k r g1 g2 hR hin) hc16) = AccMath.accVec (rowF fl tab (wL L).val (2 * t1.val) (2 * k.val)) (offF fl (wL L).val (2 * t1.val) (2 * k.val)) 0 5 :=
      acc_step d L fl tab (wL L).val (2 * t1.val) (2 * k.val) 0 _ (hRA _) ⟨4, by decide⟩ ⟨0, by decide⟩ _ rfl _ hwA_4 _ (k1_off13_form ⟨0, by decide⟩ _ _) _ hc16
    have sA0_5 : addf (AccMath.accVec (rowF fl tab (wL L).val (2 * t1.val) (2 * k.val)) (offF fl (wL L).val (2 * t1.val) (2 * k.val)) 0 5) (shapeCast S16 (pair0_lt.sl.v1853 d L tab k r g1 g2 hR hin) hc16) = AccMath.accVec (rowF fl tab (wL L).val (2 * t1.val) (2 * k.val)) (offF fl (wL L).val (2 * t1.val) (2 * k.val)) 0 6 :=
      acc_step d L fl tab (wL L).val (2 * t1.val) (2 * k.val) 0 _ (hRA _) ⟨5, by decide⟩ ⟨0, by decide⟩ _ rfl _ hwA_5 _ (k1_off14_form ⟨0, by decide⟩ _ _) _ hc16
    have sA0_6 : addf (AccMath.accVec (rowF fl tab (wL L).val (2 * t1.val) (2 * k.val)) (offF fl (wL L).val (2 * t1.val) (2 * k.val)) 0 6) (shapeCast S16 (pair0_lt.sl.v1889 d L tab k r g1 g2 hR hin) hc16) = AccMath.accVec (rowF fl tab (wL L).val (2 * t1.val) (2 * k.val)) (offF fl (wL L).val (2 * t1.val) (2 * k.val)) 0 7 :=
      acc_step d L fl tab (wL L).val (2 * t1.val) (2 * k.val) 0 _ (hRA _) ⟨6, by decide⟩ ⟨0, by decide⟩ _ rfl _ hwA_6 _ (k1_off15_form ⟨0, by decide⟩ _ _) _ hc16
    have sA0_7 : addf (AccMath.accVec (rowF fl tab (wL L).val (2 * t1.val) (2 * k.val)) (offF fl (wL L).val (2 * t1.val) (2 * k.val)) 0 7) (shapeCast S16 (pair0_lt.sl.v1925 d L tab k r g1 g2 hR hin) hc16) = AccMath.accVec (rowF fl tab (wL L).val (2 * t1.val) (2 * k.val)) (offF fl (wL L).val (2 * t1.val) (2 * k.val)) 0 8 :=
      acc_step d L fl tab (wL L).val (2 * t1.val) (2 * k.val) 0 _ (hRA _) ⟨7, by decide⟩ ⟨0, by decide⟩ _ rfl _ hwA_7 _ (k1_off16_form ⟨0, by decide⟩ _ _) _ hc16
    have sA0_8 : addf (AccMath.accVec (rowF fl tab (wL L).val (2 * t1.val) (2 * k.val)) (offF fl (wL L).val (2 * t1.val) (2 * k.val)) 0 8) (shapeCast S16 (pair0_lt.sl.v1961 d L tab k r g1 g2 hR hin) hc16) = AccMath.accVec (rowF fl tab (wL L).val (2 * t1.val) (2 * k.val)) (offF fl (wL L).val (2 * t1.val) (2 * k.val)) 0 9 :=
      acc_step d L fl tab (wL L).val (2 * t1.val) (2 * k.val) 0 _ (hRA _) ⟨8, by decide⟩ ⟨0, by decide⟩ _ rfl _ hwA_8 _ (k1_off17_form ⟨0, by decide⟩ _ _) _ hc16
    have sA0_9 : addf (AccMath.accVec (rowF fl tab (wL L).val (2 * t1.val) (2 * k.val)) (offF fl (wL L).val (2 * t1.val) (2 * k.val)) 0 9) (shapeCast S16 (pair0_lt.sl.v1997 d L tab k r g1 g2 hR hin) hc16) = AccMath.accVec (rowF fl tab (wL L).val (2 * t1.val) (2 * k.val)) (offF fl (wL L).val (2 * t1.val) (2 * k.val)) 0 10 :=
      acc_step d L fl tab (wL L).val (2 * t1.val) (2 * k.val) 0 _ (hRA _) ⟨9, by decide⟩ ⟨0, by decide⟩ _ rfl _ hwA_9 _ (k1_off18_form ⟨0, by decide⟩ _ _) _ hc16
    have sA0_10 : addf (AccMath.accVec (rowF fl tab (wL L).val (2 * t1.val) (2 * k.val)) (offF fl (wL L).val (2 * t1.val) (2 * k.val)) 0 10) (shapeCast S16 (pair0_lt.sl.v2033 d L tab k r g1 g2 hR hin) hc16) = AccMath.accVec (rowF fl tab (wL L).val (2 * t1.val) (2 * k.val)) (offF fl (wL L).val (2 * t1.val) (2 * k.val)) 0 11 :=
      acc_step d L fl tab (wL L).val (2 * t1.val) (2 * k.val) 0 _ (hRA _) ⟨10, by decide⟩ ⟨0, by decide⟩ _ rfl _ hwA_10 _ (k1_off19_form ⟨0, by decide⟩ _ _) _ hc16
    have sA0_11 : addf (AccMath.accVec (rowF fl tab (wL L).val (2 * t1.val) (2 * k.val)) (offF fl (wL L).val (2 * t1.val) (2 * k.val)) 0 11) (shapeCast S16 (pair0_lt.sl.v2069 d L tab k r g1 g2 hR hin) hc16) = AccMath.accVec (rowF fl tab (wL L).val (2 * t1.val) (2 * k.val)) (offF fl (wL L).val (2 * t1.val) (2 * k.val)) 0 12 :=
      acc_step d L fl tab (wL L).val (2 * t1.val) (2 * k.val) 0 _ (hRA _) ⟨11, by decide⟩ ⟨0, by decide⟩ _ rfl _ hwA_11 _ (k1_off20_form ⟨0, by decide⟩ _ _) _ hc16
    have sA0_12 : addf (AccMath.accVec (rowF fl tab (wL L).val (2 * t1.val) (2 * k.val)) (offF fl (wL L).val (2 * t1.val) (2 * k.val)) 0 12) (shapeCast S16 (pair0_lt.sl.v2105 d L tab k r g1 g2 hR hin) hc16) = AccMath.accVec (rowF fl tab (wL L).val (2 * t1.val) (2 * k.val)) (offF fl (wL L).val (2 * t1.val) (2 * k.val)) 0 13 :=
      acc_step d L fl tab (wL L).val (2 * t1.val) (2 * k.val) 0 _ (hRA _) ⟨12, by decide⟩ ⟨0, by decide⟩ _ rfl _ hwA_12 _ (k1_off21_form ⟨0, by decide⟩ _ _) _ hc16
    have sA0_13 : addf (AccMath.accVec (rowF fl tab (wL L).val (2 * t1.val) (2 * k.val)) (offF fl (wL L).val (2 * t1.val) (2 * k.val)) 0 13) (shapeCast S16 (pair0_lt.sl.v2141 d L tab k r g1 g2 hR hin) hc16) = AccMath.accVec (rowF fl tab (wL L).val (2 * t1.val) (2 * k.val)) (offF fl (wL L).val (2 * t1.val) (2 * k.val)) 0 14 :=
      acc_step d L fl tab (wL L).val (2 * t1.val) (2 * k.val) 0 _ (hRA _) ⟨13, by decide⟩ ⟨0, by decide⟩ _ rfl _ hwA_13 _ (k1_off22_form ⟨0, by decide⟩ _ _) _ hc16
    have sA0_14 : addf (AccMath.accVec (rowF fl tab (wL L).val (2 * t1.val) (2 * k.val)) (offF fl (wL L).val (2 * t1.val) (2 * k.val)) 0 14) (shapeCast S16 (pair0_lt.sl.v2177 d L tab k r g1 g2 hR hin) hc16) = AccMath.accVec (rowF fl tab (wL L).val (2 * t1.val) (2 * k.val)) (offF fl (wL L).val (2 * t1.val) (2 * k.val)) 0 15 :=
      acc_step d L fl tab (wL L).val (2 * t1.val) (2 * k.val) 0 _ (hRA _) ⟨14, by decide⟩ ⟨0, by decide⟩ _ rfl _ hwA_14 _ (k1_off23_form ⟨0, by decide⟩ _ _) _ hc16
    have sA0_15 : addf (AccMath.accVec (rowF fl tab (wL L).val (2 * t1.val) (2 * k.val)) (offF fl (wL L).val (2 * t1.val) (2 * k.val)) 0 15) (shapeCast S16 (pair0_lt.sl.v2213 d L tab k r g1 g2 hR hin) hc16) = AccMath.accVec (rowF fl tab (wL L).val (2 * t1.val) (2 * k.val)) (offF fl (wL L).val (2 * t1.val) (2 * k.val)) 0 16 :=
      acc_step d L fl tab (wL L).val (2 * t1.val) (2 * k.val) 0 _ (hRA _) ⟨15, by decide⟩ ⟨0, by decide⟩ _ rfl _ hwA_15 _ (k1_off24_form ⟨0, by decide⟩ _ _) _ hc16
    have sA0_16 : addf (AccMath.accVec (rowF fl tab (wL L).val (2 * t1.val) (2 * k.val)) (offF fl (wL L).val (2 * t1.val) (2 * k.val)) 0 16) (shapeCast S16 (pair0_lt.sl.v1673_1 d L tab k r g1 g2 hR hin) hc16) = AccMath.accVec (rowF fl tab (wL L).val (2 * t1.val) (2 * k.val)) (offF fl (wL L).val (2 * t1.val) (2 * k.val)) 0 17 :=
      acc_step d L fl tab (wL L).val (2 * t1.val) (2 * k.val) 0 _ (hRA _) ⟨16, by decide⟩ ⟨0, by decide⟩ _ rfl _ hwA_16 _ (k1_off9_form ⟨1, by decide⟩ _ _) _ hc16
    have sA0_17 : addf (AccMath.accVec (rowF fl tab (wL L).val (2 * t1.val) (2 * k.val)) (offF fl (wL L).val (2 * t1.val) (2 * k.val)) 0 17) (shapeCast S16 (pair0_lt.sl.v1709_1 d L tab k r g1 g2 hR hin) hc16) = AccMath.accVec (rowF fl tab (wL L).val (2 * t1.val) (2 * k.val)) (offF fl (wL L).val (2 * t1.val) (2 * k.val)) 0 18 :=
      acc_step d L fl tab (wL L).val (2 * t1.val) (2 * k.val) 0 _ (hRA _) ⟨17, by decide⟩ ⟨0, by decide⟩ _ rfl _ hwA_17 _ (k1_off10_form ⟨1, by decide⟩ _ _) _ hc16
    have sA0_18 : addf (AccMath.accVec (rowF fl tab (wL L).val (2 * t1.val) (2 * k.val)) (offF fl (wL L).val (2 * t1.val) (2 * k.val)) 0 18) (shapeCast S16 (pair0_lt.sl.v1745_1 d L tab k r g1 g2 hR hin) hc16) = AccMath.accVec (rowF fl tab (wL L).val (2 * t1.val) (2 * k.val)) (offF fl (wL L).val (2 * t1.val) (2 * k.val)) 0 19 :=
      acc_step d L fl tab (wL L).val (2 * t1.val) (2 * k.val) 0 _ (hRA _) ⟨18, by decide⟩ ⟨0, by decide⟩ _ rfl _ hwA_18 _ (k1_off11_form ⟨1, by decide⟩ _ _) _ hc16
    have sA0_19 : addf (AccMath.accVec (rowF fl tab (wL L).val (2 * t1.val) (2 * k.val)) (offF fl (wL L).val (2 * t1.val) (2 * k.val)) 0 19) (shapeCast S16 (pair0_lt.sl.v1781_1 d L tab k r g1 g2 hR hin) hc16) = AccMath.accVec (rowF fl tab (wL L).val (2 * t1.val) (2 * k.val)) (offF fl (wL L).val (2 * t1.val) (2 * k.val)) 0 20 :=
      acc_step d L fl tab (wL L).val (2 * t1.val) (2 * k.val) 0 _ (hRA _) ⟨19, by decide⟩ ⟨0, by decide⟩ _ rfl _ hwA_19 _ (k1_off12_form ⟨1, by decide⟩ _ _) _ hc16
    have sA0_20 : addf (AccMath.accVec (rowF fl tab (wL L).val (2 * t1.val) (2 * k.val)) (offF fl (wL L).val (2 * t1.val) (2 * k.val)) 0 20) (shapeCast S16 (pair0_lt.sl.v1817_1 d L tab k r g1 g2 hR hin) hc16) = AccMath.accVec (rowF fl tab (wL L).val (2 * t1.val) (2 * k.val)) (offF fl (wL L).val (2 * t1.val) (2 * k.val)) 0 21 :=
      acc_step d L fl tab (wL L).val (2 * t1.val) (2 * k.val) 0 _ (hRA _) ⟨20, by decide⟩ ⟨0, by decide⟩ _ rfl _ hwA_20 _ (k1_off13_form ⟨1, by decide⟩ _ _) _ hc16
    have sA0_21 : addf (AccMath.accVec (rowF fl tab (wL L).val (2 * t1.val) (2 * k.val)) (offF fl (wL L).val (2 * t1.val) (2 * k.val)) 0 21) (shapeCast S16 (pair0_lt.sl.v1853_1 d L tab k r g1 g2 hR hin) hc16) = AccMath.accVec (rowF fl tab (wL L).val (2 * t1.val) (2 * k.val)) (offF fl (wL L).val (2 * t1.val) (2 * k.val)) 0 22 :=
      acc_step d L fl tab (wL L).val (2 * t1.val) (2 * k.val) 0 _ (hRA _) ⟨21, by decide⟩ ⟨0, by decide⟩ _ rfl _ hwA_21 _ (k1_off14_form ⟨1, by decide⟩ _ _) _ hc16
    have sA0_22 : addf (AccMath.accVec (rowF fl tab (wL L).val (2 * t1.val) (2 * k.val)) (offF fl (wL L).val (2 * t1.val) (2 * k.val)) 0 22) (shapeCast S16 (pair0_lt.sl.v1889_1 d L tab k r g1 g2 hR hin) hc16) = AccMath.accVec (rowF fl tab (wL L).val (2 * t1.val) (2 * k.val)) (offF fl (wL L).val (2 * t1.val) (2 * k.val)) 0 23 :=
      acc_step d L fl tab (wL L).val (2 * t1.val) (2 * k.val) 0 _ (hRA _) ⟨22, by decide⟩ ⟨0, by decide⟩ _ rfl _ hwA_22 _ (k1_off15_form ⟨1, by decide⟩ _ _) _ hc16
    have sA0_23 : addf (AccMath.accVec (rowF fl tab (wL L).val (2 * t1.val) (2 * k.val)) (offF fl (wL L).val (2 * t1.val) (2 * k.val)) 0 23) (shapeCast S16 (pair0_lt.sl.v1925_1 d L tab k r g1 g2 hR hin) hc16) = AccMath.accVec (rowF fl tab (wL L).val (2 * t1.val) (2 * k.val)) (offF fl (wL L).val (2 * t1.val) (2 * k.val)) 0 24 :=
      acc_step d L fl tab (wL L).val (2 * t1.val) (2 * k.val) 0 _ (hRA _) ⟨23, by decide⟩ ⟨0, by decide⟩ _ rfl _ hwA_23 _ (k1_off16_form ⟨1, by decide⟩ _ _) _ hc16
    have sA0_24 : addf (AccMath.accVec (rowF fl tab (wL L).val (2 * t1.val) (2 * k.val)) (offF fl (wL L).val (2 * t1.val) (2 * k.val)) 0 24) (shapeCast S16 (pair0_lt.sl.v1961_1 d L tab k r g1 g2 hR hin) hc16) = AccMath.accVec (rowF fl tab (wL L).val (2 * t1.val) (2 * k.val)) (offF fl (wL L).val (2 * t1.val) (2 * k.val)) 0 25 :=
      acc_step d L fl tab (wL L).val (2 * t1.val) (2 * k.val) 0 _ (hRA _) ⟨24, by decide⟩ ⟨0, by decide⟩ _ rfl _ hwA_24 _ (k1_off17_form ⟨1, by decide⟩ _ _) _ hc16
    have sA0_25 : addf (AccMath.accVec (rowF fl tab (wL L).val (2 * t1.val) (2 * k.val)) (offF fl (wL L).val (2 * t1.val) (2 * k.val)) 0 25) (shapeCast S16 (pair0_lt.sl.v1997_1 d L tab k r g1 g2 hR hin) hc16) = AccMath.accVec (rowF fl tab (wL L).val (2 * t1.val) (2 * k.val)) (offF fl (wL L).val (2 * t1.val) (2 * k.val)) 0 26 :=
      acc_step d L fl tab (wL L).val (2 * t1.val) (2 * k.val) 0 _ (hRA _) ⟨25, by decide⟩ ⟨0, by decide⟩ _ rfl _ hwA_25 _ (k1_off18_form ⟨1, by decide⟩ _ _) _ hc16
    have sA0_26 : addf (AccMath.accVec (rowF fl tab (wL L).val (2 * t1.val) (2 * k.val)) (offF fl (wL L).val (2 * t1.val) (2 * k.val)) 0 26) (shapeCast S16 (pair0_lt.sl.v2033_1 d L tab k r g1 g2 hR hin) hc16) = AccMath.accVec (rowF fl tab (wL L).val (2 * t1.val) (2 * k.val)) (offF fl (wL L).val (2 * t1.val) (2 * k.val)) 0 27 :=
      acc_step d L fl tab (wL L).val (2 * t1.val) (2 * k.val) 0 _ (hRA _) ⟨26, by decide⟩ ⟨0, by decide⟩ _ rfl _ hwA_26 _ (k1_off19_form ⟨1, by decide⟩ _ _) _ hc16
    have sA0_27 : addf (AccMath.accVec (rowF fl tab (wL L).val (2 * t1.val) (2 * k.val)) (offF fl (wL L).val (2 * t1.val) (2 * k.val)) 0 27) (shapeCast S16 (pair0_lt.sl.v2069_1 d L tab k r g1 g2 hR hin) hc16) = AccMath.accVec (rowF fl tab (wL L).val (2 * t1.val) (2 * k.val)) (offF fl (wL L).val (2 * t1.val) (2 * k.val)) 0 28 :=
      acc_step d L fl tab (wL L).val (2 * t1.val) (2 * k.val) 0 _ (hRA _) ⟨27, by decide⟩ ⟨0, by decide⟩ _ rfl _ hwA_27 _ (k1_off20_form ⟨1, by decide⟩ _ _) _ hc16
    have sA0_28 : addf (AccMath.accVec (rowF fl tab (wL L).val (2 * t1.val) (2 * k.val)) (offF fl (wL L).val (2 * t1.val) (2 * k.val)) 0 28) (shapeCast S16 (pair0_lt.sl.v2105_1 d L tab k r g1 g2 hR hin) hc16) = AccMath.accVec (rowF fl tab (wL L).val (2 * t1.val) (2 * k.val)) (offF fl (wL L).val (2 * t1.val) (2 * k.val)) 0 29 :=
      acc_step d L fl tab (wL L).val (2 * t1.val) (2 * k.val) 0 _ (hRA _) ⟨28, by decide⟩ ⟨0, by decide⟩ _ rfl _ hwA_28 _ (k1_off21_form ⟨1, by decide⟩ _ _) _ hc16
    have sA0_29 : addf (AccMath.accVec (rowF fl tab (wL L).val (2 * t1.val) (2 * k.val)) (offF fl (wL L).val (2 * t1.val) (2 * k.val)) 0 29) (shapeCast S16 (pair0_lt.sl.v2141_1 d L tab k r g1 g2 hR hin) hc16) = AccMath.accVec (rowF fl tab (wL L).val (2 * t1.val) (2 * k.val)) (offF fl (wL L).val (2 * t1.val) (2 * k.val)) 0 30 :=
      acc_step d L fl tab (wL L).val (2 * t1.val) (2 * k.val) 0 _ (hRA _) ⟨29, by decide⟩ ⟨0, by decide⟩ _ rfl _ hwA_29 _ (k1_off22_form ⟨1, by decide⟩ _ _) _ hc16
    have sA0_30 : addf (AccMath.accVec (rowF fl tab (wL L).val (2 * t1.val) (2 * k.val)) (offF fl (wL L).val (2 * t1.val) (2 * k.val)) 0 30) (shapeCast S16 (pair0_lt.sl.v2177_1 d L tab k r g1 g2 hR hin) hc16) = AccMath.accVec (rowF fl tab (wL L).val (2 * t1.val) (2 * k.val)) (offF fl (wL L).val (2 * t1.val) (2 * k.val)) 0 31 :=
      acc_step d L fl tab (wL L).val (2 * t1.val) (2 * k.val) 0 _ (hRA _) ⟨30, by decide⟩ ⟨0, by decide⟩ _ rfl _ hwA_30 _ (k1_off23_form ⟨1, by decide⟩ _ _) _ hc16
    have sA0_31 : addf (AccMath.accVec (rowF fl tab (wL L).val (2 * t1.val) (2 * k.val)) (offF fl (wL L).val (2 * t1.val) (2 * k.val)) 0 31) (shapeCast S16 (pair0_lt.sl.v2213_1 d L tab k r g1 g2 hR hin) hc16) = AccMath.accVec (rowF fl tab (wL L).val (2 * t1.val) (2 * k.val)) (offF fl (wL L).val (2 * t1.val) (2 * k.val)) 0 32 :=
      acc_step d L fl tab (wL L).val (2 * t1.val) (2 * k.val) 0 _ (hRA _) ⟨31, by decide⟩ ⟨0, by decide⟩ _ rfl _ hwA_31 _ (k1_off24_form ⟨1, by decide⟩ _ _) _ hc16
    have sA0_32 : addf (AccMath.accVec (rowF fl tab (wL L).val (2 * t1.val) (2 * k.val)) (offF fl (wL L).val (2 * t1.val) (2 * k.val)) 0 32) (shapeCast S16 (pair0_lt.sl.v1673_2 d L tab k r g1 g2 hR hin) hc16) = AccMath.accVec (rowF fl tab (wL L).val (2 * t1.val) (2 * k.val)) (offF fl (wL L).val (2 * t1.val) (2 * k.val)) 0 33 :=
      acc_step d L fl tab (wL L).val (2 * t1.val) (2 * k.val) 0 _ (hRA _) ⟨32, by decide⟩ ⟨0, by decide⟩ _ rfl _ hwA_32 _ (k1_off9_form ⟨2, by decide⟩ _ _) _ hc16
    have sA0_33 : addf (AccMath.accVec (rowF fl tab (wL L).val (2 * t1.val) (2 * k.val)) (offF fl (wL L).val (2 * t1.val) (2 * k.val)) 0 33) (shapeCast S16 (pair0_lt.sl.v1709_2 d L tab k r g1 g2 hR hin) hc16) = AccMath.accVec (rowF fl tab (wL L).val (2 * t1.val) (2 * k.val)) (offF fl (wL L).val (2 * t1.val) (2 * k.val)) 0 34 :=
      acc_step d L fl tab (wL L).val (2 * t1.val) (2 * k.val) 0 _ (hRA _) ⟨33, by decide⟩ ⟨0, by decide⟩ _ rfl _ hwA_33 _ (k1_off10_form ⟨2, by decide⟩ _ _) _ hc16
    have sA0_34 : addf (AccMath.accVec (rowF fl tab (wL L).val (2 * t1.val) (2 * k.val)) (offF fl (wL L).val (2 * t1.val) (2 * k.val)) 0 34) (shapeCast S16 (pair0_lt.sl.v1745_2 d L tab k r g1 g2 hR hin) hc16) = AccMath.accVec (rowF fl tab (wL L).val (2 * t1.val) (2 * k.val)) (offF fl (wL L).val (2 * t1.val) (2 * k.val)) 0 35 :=
      acc_step d L fl tab (wL L).val (2 * t1.val) (2 * k.val) 0 _ (hRA _) ⟨34, by decide⟩ ⟨0, by decide⟩ _ rfl _ hwA_34 _ (k1_off11_form ⟨2, by decide⟩ _ _) _ hc16
    have sA0_35 : addf (AccMath.accVec (rowF fl tab (wL L).val (2 * t1.val) (2 * k.val)) (offF fl (wL L).val (2 * t1.val) (2 * k.val)) 0 35) (shapeCast S16 (pair0_lt.sl.v1781_2 d L tab k r g1 g2 hR hin) hc16) = AccMath.accVec (rowF fl tab (wL L).val (2 * t1.val) (2 * k.val)) (offF fl (wL L).val (2 * t1.val) (2 * k.val)) 0 36 :=
      acc_step d L fl tab (wL L).val (2 * t1.val) (2 * k.val) 0 _ (hRA _) ⟨35, by decide⟩ ⟨0, by decide⟩ _ rfl _ hwA_35 _ (k1_off12_form ⟨2, by decide⟩ _ _) _ hc16
    have sA0_36 : addf (AccMath.accVec (rowF fl tab (wL L).val (2 * t1.val) (2 * k.val)) (offF fl (wL L).val (2 * t1.val) (2 * k.val)) 0 36) (shapeCast S16 (pair0_lt.sl.v1817_2 d L tab k r g1 g2 hR hin) hc16) = AccMath.accVec (rowF fl tab (wL L).val (2 * t1.val) (2 * k.val)) (offF fl (wL L).val (2 * t1.val) (2 * k.val)) 0 37 :=
      acc_step d L fl tab (wL L).val (2 * t1.val) (2 * k.val) 0 _ (hRA _) ⟨36, by decide⟩ ⟨0, by decide⟩ _ rfl _ hwA_36 _ (k1_off13_form ⟨2, by decide⟩ _ _) _ hc16
    have sA0_37 : addf (AccMath.accVec (rowF fl tab (wL L).val (2 * t1.val) (2 * k.val)) (offF fl (wL L).val (2 * t1.val) (2 * k.val)) 0 37) (shapeCast S16 (pair0_lt.sl.v1853_2 d L tab k r g1 g2 hR hin) hc16) = AccMath.accVec (rowF fl tab (wL L).val (2 * t1.val) (2 * k.val)) (offF fl (wL L).val (2 * t1.val) (2 * k.val)) 0 38 :=
      acc_step d L fl tab (wL L).val (2 * t1.val) (2 * k.val) 0 _ (hRA _) ⟨37, by decide⟩ ⟨0, by decide⟩ _ rfl _ hwA_37 _ (k1_off14_form ⟨2, by decide⟩ _ _) _ hc16
    have sA0_38 : addf (AccMath.accVec (rowF fl tab (wL L).val (2 * t1.val) (2 * k.val)) (offF fl (wL L).val (2 * t1.val) (2 * k.val)) 0 38) (shapeCast S16 (pair0_lt.sl.v1889_2 d L tab k r g1 g2 hR hin) hc16) = AccMath.accVec (rowF fl tab (wL L).val (2 * t1.val) (2 * k.val)) (offF fl (wL L).val (2 * t1.val) (2 * k.val)) 0 39 :=
      acc_step d L fl tab (wL L).val (2 * t1.val) (2 * k.val) 0 _ (hRA _) ⟨38, by decide⟩ ⟨0, by decide⟩ _ rfl _ hwA_38 _ (k1_off15_form ⟨2, by decide⟩ _ _) _ hc16
    have sA0_39 : addf (AccMath.accVec (rowF fl tab (wL L).val (2 * t1.val) (2 * k.val)) (offF fl (wL L).val (2 * t1.val) (2 * k.val)) 0 39) (shapeCast S16 (pair0_lt.sl.v1925_2 d L tab k r g1 g2 hR hin) hc16) = AccMath.accVec (rowF fl tab (wL L).val (2 * t1.val) (2 * k.val)) (offF fl (wL L).val (2 * t1.val) (2 * k.val)) 0 40 :=
      acc_step d L fl tab (wL L).val (2 * t1.val) (2 * k.val) 0 _ (hRA _) ⟨39, by decide⟩ ⟨0, by decide⟩ _ rfl _ hwA_39 _ (k1_off16_form ⟨2, by decide⟩ _ _) _ hc16
    have sA0_40 : addf (AccMath.accVec (rowF fl tab (wL L).val (2 * t1.val) (2 * k.val)) (offF fl (wL L).val (2 * t1.val) (2 * k.val)) 0 40) (shapeCast S16 (pair0_lt.sl.v1961_2 d L tab k r g1 g2 hR hin) hc16) = AccMath.accVec (rowF fl tab (wL L).val (2 * t1.val) (2 * k.val)) (offF fl (wL L).val (2 * t1.val) (2 * k.val)) 0 41 :=
      acc_step d L fl tab (wL L).val (2 * t1.val) (2 * k.val) 0 _ (hRA _) ⟨40, by decide⟩ ⟨0, by decide⟩ _ rfl _ hwA_40 _ (k1_off17_form ⟨2, by decide⟩ _ _) _ hc16
    have sA0_41 : addf (AccMath.accVec (rowF fl tab (wL L).val (2 * t1.val) (2 * k.val)) (offF fl (wL L).val (2 * t1.val) (2 * k.val)) 0 41) (shapeCast S16 (pair0_lt.sl.v1997_2 d L tab k r g1 g2 hR hin) hc16) = AccMath.accVec (rowF fl tab (wL L).val (2 * t1.val) (2 * k.val)) (offF fl (wL L).val (2 * t1.val) (2 * k.val)) 0 42 :=
      acc_step d L fl tab (wL L).val (2 * t1.val) (2 * k.val) 0 _ (hRA _) ⟨41, by decide⟩ ⟨0, by decide⟩ _ rfl _ hwA_41 _ (k1_off18_form ⟨2, by decide⟩ _ _) _ hc16
    have sA0_42 : addf (AccMath.accVec (rowF fl tab (wL L).val (2 * t1.val) (2 * k.val)) (offF fl (wL L).val (2 * t1.val) (2 * k.val)) 0 42) (shapeCast S16 (pair0_lt.sl.v2033_2 d L tab k r g1 g2 hR hin) hc16) = AccMath.accVec (rowF fl tab (wL L).val (2 * t1.val) (2 * k.val)) (offF fl (wL L).val (2 * t1.val) (2 * k.val)) 0 43 :=
      acc_step d L fl tab (wL L).val (2 * t1.val) (2 * k.val) 0 _ (hRA _) ⟨42, by decide⟩ ⟨0, by decide⟩ _ rfl _ hwA_42 _ (k1_off19_form ⟨2, by decide⟩ _ _) _ hc16
    have sA0_43 : addf (AccMath.accVec (rowF fl tab (wL L).val (2 * t1.val) (2 * k.val)) (offF fl (wL L).val (2 * t1.val) (2 * k.val)) 0 43) (shapeCast S16 (pair0_lt.sl.v2069_2 d L tab k r g1 g2 hR hin) hc16) = AccMath.accVec (rowF fl tab (wL L).val (2 * t1.val) (2 * k.val)) (offF fl (wL L).val (2 * t1.val) (2 * k.val)) 0 44 :=
      acc_step d L fl tab (wL L).val (2 * t1.val) (2 * k.val) 0 _ (hRA _) ⟨43, by decide⟩ ⟨0, by decide⟩ _ rfl _ hwA_43 _ (k1_off20_form ⟨2, by decide⟩ _ _) _ hc16
    have sA0_44 : addf (AccMath.accVec (rowF fl tab (wL L).val (2 * t1.val) (2 * k.val)) (offF fl (wL L).val (2 * t1.val) (2 * k.val)) 0 44) (shapeCast S16 (pair0_lt.sl.v2105_2 d L tab k r g1 g2 hR hin) hc16) = AccMath.accVec (rowF fl tab (wL L).val (2 * t1.val) (2 * k.val)) (offF fl (wL L).val (2 * t1.val) (2 * k.val)) 0 45 :=
      acc_step d L fl tab (wL L).val (2 * t1.val) (2 * k.val) 0 _ (hRA _) ⟨44, by decide⟩ ⟨0, by decide⟩ _ rfl _ hwA_44 _ (k1_off21_form ⟨2, by decide⟩ _ _) _ hc16
    have sA0_45 : addf (AccMath.accVec (rowF fl tab (wL L).val (2 * t1.val) (2 * k.val)) (offF fl (wL L).val (2 * t1.val) (2 * k.val)) 0 45) (shapeCast S16 (pair0_lt.sl.v2141_2 d L tab k r g1 g2 hR hin) hc16) = AccMath.accVec (rowF fl tab (wL L).val (2 * t1.val) (2 * k.val)) (offF fl (wL L).val (2 * t1.val) (2 * k.val)) 0 46 :=
      acc_step d L fl tab (wL L).val (2 * t1.val) (2 * k.val) 0 _ (hRA _) ⟨45, by decide⟩ ⟨0, by decide⟩ _ rfl _ hwA_45 _ (k1_off22_form ⟨2, by decide⟩ _ _) _ hc16
    have sA0_46 : addf (AccMath.accVec (rowF fl tab (wL L).val (2 * t1.val) (2 * k.val)) (offF fl (wL L).val (2 * t1.val) (2 * k.val)) 0 46) (shapeCast S16 (pair0_lt.sl.v2177_2 d L tab k r g1 g2 hR hin) hc16) = AccMath.accVec (rowF fl tab (wL L).val (2 * t1.val) (2 * k.val)) (offF fl (wL L).val (2 * t1.val) (2 * k.val)) 0 47 :=
      acc_step d L fl tab (wL L).val (2 * t1.val) (2 * k.val) 0 _ (hRA _) ⟨46, by decide⟩ ⟨0, by decide⟩ _ rfl _ hwA_46 _ (k1_off23_form ⟨2, by decide⟩ _ _) _ hc16
    have sA0_47 : addf (AccMath.accVec (rowF fl tab (wL L).val (2 * t1.val) (2 * k.val)) (offF fl (wL L).val (2 * t1.val) (2 * k.val)) 0 47) (shapeCast S16 (pair0_lt.sl.v2213_2 d L tab k r g1 g2 hR hin) hc16) = AccMath.accVec (rowF fl tab (wL L).val (2 * t1.val) (2 * k.val)) (offF fl (wL L).val (2 * t1.val) (2 * k.val)) 0 48 :=
      acc_step d L fl tab (wL L).val (2 * t1.val) (2 * k.val) 0 _ (hRA _) ⟨47, by decide⟩ ⟨0, by decide⟩ _ rfl _ hwA_47 _ (k1_off24_form ⟨2, by decide⟩ _ _) _ hc16
    have sA0_48 : addf (AccMath.accVec (rowF fl tab (wL L).val (2 * t1.val) (2 * k.val)) (offF fl (wL L).val (2 * t1.val) (2 * k.val)) 0 48) (shapeCast S16 (pair0_lt.sl.v1462 d L tab k r g1 g2 hR hin) hc16) = AccMath.accVec (rowF fl tab (wL L).val (2 * t1.val) (2 * k.val)) (offF fl (wL L).val (2 * t1.val) (2 * k.val)) 0 49 :=
      acc_step d L fl tab (wL L).val (2 * t1.val) (2 * k.val) 0 _ (hRA _) ⟨48, by decide⟩ ⟨0, by decide⟩ _ rfl _ hwA_48 _ (k1_off26_form _ _) _ hc16
    have sA0_49 : addf (AccMath.accVec (rowF fl tab (wL L).val (2 * t1.val) (2 * k.val)) (offF fl (wL L).val (2 * t1.val) (2 * k.val)) 0 49) (shapeCast S16 (pair0_lt.sl.v1496 d L tab k r g1 g2 hR hin) hc16) = AccMath.accVec (rowF fl tab (wL L).val (2 * t1.val) (2 * k.val)) (offF fl (wL L).val (2 * t1.val) (2 * k.val)) 0 50 :=
      acc_step d L fl tab (wL L).val (2 * t1.val) (2 * k.val) 0 _ (hRA _) ⟨49, by decide⟩ ⟨0, by decide⟩ _ rfl _ hwA_49 _ (k1_off27_form _ _) _ hc16
    have hPA0 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val)) (offF fl (wL L).val (2 * t1.val) (2 * k.val)) 0 0) (shapeCast S16 (pair0_lt.sl.v1673 d L tab k r g1 g2 hR hin) hc16)) (shapeCast S16 (pair0_lt.sl.v1709 d L tab k r g1 g2 hR hin) hc16)) (shapeCast S16 (pair0_lt.sl.v1745 d L tab k r g1 g2 hR hin) hc16)) (shapeCast S16 (pair0_lt.sl.v1781 d L tab k r g1 g2 hR hin) hc16)) (shapeCast S16 (pair0_lt.sl.v1817 d L tab k r g1 g2 hR hin) hc16)) (shapeCast S16 (pair0_lt.sl.v1853 d L tab k r g1 g2 hR hin) hc16)) (shapeCast S16 (pair0_lt.sl.v1889 d L tab k r g1 g2 hR hin) hc16)) (shapeCast S16 (pair0_lt.sl.v1925 d L tab k r g1 g2 hR hin) hc16)) (shapeCast S16 (pair0_lt.sl.v1961 d L tab k r g1 g2 hR hin) hc16)) (shapeCast S16 (pair0_lt.sl.v1997 d L tab k r g1 g2 hR hin) hc16)) (shapeCast S16 (pair0_lt.sl.v2033 d L tab k r g1 g2 hR hin) hc16)) (shapeCast S16 (pair0_lt.sl.v2069 d L tab k r g1 g2 hR hin) hc16)) (shapeCast S16 (pair0_lt.sl.v2105 d L tab k r g1 g2 hR hin) hc16)) (shapeCast S16 (pair0_lt.sl.v2141 d L tab k r g1 g2 hR hin) hc16)) (shapeCast S16 (pair0_lt.sl.v2177 d L tab k r g1 g2 hR hin) hc16)) (shapeCast S16 (pair0_lt.sl.v2213 d L tab k r g1 g2 hR hin) hc16)) (shapeCast S16 (pair0_lt.sl.v1673_1 d L tab k r g1 g2 hR hin) hc16)) (shapeCast S16 (pair0_lt.sl.v1709_1 d L tab k r g1 g2 hR hin) hc16)) (shapeCast S16 (pair0_lt.sl.v1745_1 d L tab k r g1 g2 hR hin) hc16)) (shapeCast S16 (pair0_lt.sl.v1781_1 d L tab k r g1 g2 hR hin) hc16)) (shapeCast S16 (pair0_lt.sl.v1817_1 d L tab k r g1 g2 hR hin) hc16)) (shapeCast S16 (pair0_lt.sl.v1853_1 d L tab k r g1 g2 hR hin) hc16)) (shapeCast S16 (pair0_lt.sl.v1889_1 d L tab k r g1 g2 hR hin) hc16)) (shapeCast S16 (pair0_lt.sl.v1925_1 d L tab k r g1 g2 hR hin) hc16)) (shapeCast S16 (pair0_lt.sl.v1961_1 d L tab k r g1 g2 hR hin) hc16)) (shapeCast S16 (pair0_lt.sl.v1997_1 d L tab k r g1 g2 hR hin) hc16)) (shapeCast S16 (pair0_lt.sl.v2033_1 d L tab k r g1 g2 hR hin) hc16)) (shapeCast S16 (pair0_lt.sl.v2069_1 d L tab k r g1 g2 hR hin) hc16)) (shapeCast S16 (pair0_lt.sl.v2105_1 d L tab k r g1 g2 hR hin) hc16)) (shapeCast S16 (pair0_lt.sl.v2141_1 d L tab k r g1 g2 hR hin) hc16)) (shapeCast S16 (pair0_lt.sl.v2177_1 d L tab k r g1 g2 hR hin) hc16)) (shapeCast S16 (pair0_lt.sl.v2213_1 d L tab k r g1 g2 hR hin) hc16)) (shapeCast S16 (pair0_lt.sl.v1673_2 d L tab k r g1 g2 hR hin) hc16)) (shapeCast S16 (pair0_lt.sl.v1709_2 d L tab k r g1 g2 hR hin) hc16)) (shapeCast S16 (pair0_lt.sl.v1745_2 d L tab k r g1 g2 hR hin) hc16)) (shapeCast S16 (pair0_lt.sl.v1781_2 d L tab k r g1 g2 hR hin) hc16)) (shapeCast S16 (pair0_lt.sl.v1817_2 d L tab k r g1 g2 hR hin) hc16)) (shapeCast S16 (pair0_lt.sl.v1853_2 d L tab k r g1 g2 hR hin) hc16)) (shapeCast S16 (pair0_lt.sl.v1889_2 d L tab k r g1 g2 hR hin) hc16)) (shapeCast S16 (pair0_lt.sl.v1925_2 d L tab k r g1 g2 hR hin) hc16)) (shapeCast S16 (pair0_lt.sl.v1961_2 d L tab k r g1 g2 hR hin) hc16)) (shapeCast S16 (pair0_lt.sl.v1997_2 d L tab k r g1 g2 hR hin) hc16)) (shapeCast S16 (pair0_lt.sl.v2033_2 d L tab k r g1 g2 hR hin) hc16)) (shapeCast S16 (pair0_lt.sl.v2069_2 d L tab k r g1 g2 hR hin) hc16)) (shapeCast S16 (pair0_lt.sl.v2105_2 d L tab k r g1 g2 hR hin) hc16)) (shapeCast S16 (pair0_lt.sl.v2141_2 d L tab k r g1 g2 hR hin) hc16)) (shapeCast S16 (pair0_lt.sl.v2177_2 d L tab k r g1 g2 hR hin) hc16)) (shapeCast S16 (pair0_lt.sl.v2213_2 d L tab k r g1 g2 hR hin) hc16)) (shapeCast S16 (pair0_lt.sl.v1462 d L tab k r g1 g2 hR hin) hc16)) (shapeCast S16 (pair0_lt.sl.v1496 d L tab k r g1 g2 hR hin) hc16)) hc1 x = Spec.bagPartial fl tab (128 * (wL L).val + 16 * (2 * t1.val) + (2 * k.val)) (16 * 0 + (x 2).val) 50 := fun x => by
      rw [sA0_0, sA0_1, sA0_2, sA0_3, sA0_4, sA0_5, sA0_6, sA0_7, sA0_8, sA0_9, sA0_10, sA0_11, sA0_12, sA0_13, sA0_14, sA0_15, sA0_16, sA0_17, sA0_18, sA0_19, sA0_20, sA0_21, sA0_22, sA0_23, sA0_24, sA0_25, sA0_26, sA0_27, sA0_28, sA0_29, sA0_30, sA0_31, sA0_32, sA0_33, sA0_34, sA0_35, sA0_36, sA0_37, sA0_38, sA0_39, sA0_40, sA0_41, sA0_42, sA0_43, sA0_44, sA0_45, sA0_46, sA0_47, sA0_48, sA0_49]; exact payload_ok fl tab (wL L).val (2 * t1.val) (2 * k.val) ⟨0, by decide⟩ hc1 x
    have sA1_0 : addf (AccMath.accVec (rowF fl tab (wL L).val (2 * t1.val) (2 * k.val)) (offF fl (wL L).val (2 * t1.val) (2 * k.val)) 1 0) (shapeCast S16 (pair0_lt.sl.v1681 d L tab k r g1 g2 hR hin) hc16) = AccMath.accVec (rowF fl tab (wL L).val (2 * t1.val) (2 * k.val)) (offF fl (wL L).val (2 * t1.val) (2 * k.val)) 1 1 :=
      acc_step d L fl tab (wL L).val (2 * t1.val) (2 * k.val) 0 _ (hRA _) ⟨0, by decide⟩ ⟨1, by decide⟩ _ rfl _ hwA_0 _ (k1_off9_form ⟨0, by decide⟩ _ _) _ hc16
    have sA1_1 : addf (AccMath.accVec (rowF fl tab (wL L).val (2 * t1.val) (2 * k.val)) (offF fl (wL L).val (2 * t1.val) (2 * k.val)) 1 1) (shapeCast S16 (pair0_lt.sl.v1717 d L tab k r g1 g2 hR hin) hc16) = AccMath.accVec (rowF fl tab (wL L).val (2 * t1.val) (2 * k.val)) (offF fl (wL L).val (2 * t1.val) (2 * k.val)) 1 2 :=
      acc_step d L fl tab (wL L).val (2 * t1.val) (2 * k.val) 0 _ (hRA _) ⟨1, by decide⟩ ⟨1, by decide⟩ _ rfl _ hwA_1 _ (k1_off10_form ⟨0, by decide⟩ _ _) _ hc16
    have sA1_2 : addf (AccMath.accVec (rowF fl tab (wL L).val (2 * t1.val) (2 * k.val)) (offF fl (wL L).val (2 * t1.val) (2 * k.val)) 1 2) (shapeCast S16 (pair0_lt.sl.v1753 d L tab k r g1 g2 hR hin) hc16) = AccMath.accVec (rowF fl tab (wL L).val (2 * t1.val) (2 * k.val)) (offF fl (wL L).val (2 * t1.val) (2 * k.val)) 1 3 :=
      acc_step d L fl tab (wL L).val (2 * t1.val) (2 * k.val) 0 _ (hRA _) ⟨2, by decide⟩ ⟨1, by decide⟩ _ rfl _ hwA_2 _ (k1_off11_form ⟨0, by decide⟩ _ _) _ hc16
    have sA1_3 : addf (AccMath.accVec (rowF fl tab (wL L).val (2 * t1.val) (2 * k.val)) (offF fl (wL L).val (2 * t1.val) (2 * k.val)) 1 3) (shapeCast S16 (pair0_lt.sl.v1789 d L tab k r g1 g2 hR hin) hc16) = AccMath.accVec (rowF fl tab (wL L).val (2 * t1.val) (2 * k.val)) (offF fl (wL L).val (2 * t1.val) (2 * k.val)) 1 4 :=
      acc_step d L fl tab (wL L).val (2 * t1.val) (2 * k.val) 0 _ (hRA _) ⟨3, by decide⟩ ⟨1, by decide⟩ _ rfl _ hwA_3 _ (k1_off12_form ⟨0, by decide⟩ _ _) _ hc16
    have sA1_4 : addf (AccMath.accVec (rowF fl tab (wL L).val (2 * t1.val) (2 * k.val)) (offF fl (wL L).val (2 * t1.val) (2 * k.val)) 1 4) (shapeCast S16 (pair0_lt.sl.v1825 d L tab k r g1 g2 hR hin) hc16) = AccMath.accVec (rowF fl tab (wL L).val (2 * t1.val) (2 * k.val)) (offF fl (wL L).val (2 * t1.val) (2 * k.val)) 1 5 :=
      acc_step d L fl tab (wL L).val (2 * t1.val) (2 * k.val) 0 _ (hRA _) ⟨4, by decide⟩ ⟨1, by decide⟩ _ rfl _ hwA_4 _ (k1_off13_form ⟨0, by decide⟩ _ _) _ hc16
    have sA1_5 : addf (AccMath.accVec (rowF fl tab (wL L).val (2 * t1.val) (2 * k.val)) (offF fl (wL L).val (2 * t1.val) (2 * k.val)) 1 5) (shapeCast S16 (pair0_lt.sl.v1861 d L tab k r g1 g2 hR hin) hc16) = AccMath.accVec (rowF fl tab (wL L).val (2 * t1.val) (2 * k.val)) (offF fl (wL L).val (2 * t1.val) (2 * k.val)) 1 6 :=
      acc_step d L fl tab (wL L).val (2 * t1.val) (2 * k.val) 0 _ (hRA _) ⟨5, by decide⟩ ⟨1, by decide⟩ _ rfl _ hwA_5 _ (k1_off14_form ⟨0, by decide⟩ _ _) _ hc16
    have sA1_6 : addf (AccMath.accVec (rowF fl tab (wL L).val (2 * t1.val) (2 * k.val)) (offF fl (wL L).val (2 * t1.val) (2 * k.val)) 1 6) (shapeCast S16 (pair0_lt.sl.v1897 d L tab k r g1 g2 hR hin) hc16) = AccMath.accVec (rowF fl tab (wL L).val (2 * t1.val) (2 * k.val)) (offF fl (wL L).val (2 * t1.val) (2 * k.val)) 1 7 :=
      acc_step d L fl tab (wL L).val (2 * t1.val) (2 * k.val) 0 _ (hRA _) ⟨6, by decide⟩ ⟨1, by decide⟩ _ rfl _ hwA_6 _ (k1_off15_form ⟨0, by decide⟩ _ _) _ hc16
    have sA1_7 : addf (AccMath.accVec (rowF fl tab (wL L).val (2 * t1.val) (2 * k.val)) (offF fl (wL L).val (2 * t1.val) (2 * k.val)) 1 7) (shapeCast S16 (pair0_lt.sl.v1933 d L tab k r g1 g2 hR hin) hc16) = AccMath.accVec (rowF fl tab (wL L).val (2 * t1.val) (2 * k.val)) (offF fl (wL L).val (2 * t1.val) (2 * k.val)) 1 8 :=
      acc_step d L fl tab (wL L).val (2 * t1.val) (2 * k.val) 0 _ (hRA _) ⟨7, by decide⟩ ⟨1, by decide⟩ _ rfl _ hwA_7 _ (k1_off16_form ⟨0, by decide⟩ _ _) _ hc16
    have sA1_8 : addf (AccMath.accVec (rowF fl tab (wL L).val (2 * t1.val) (2 * k.val)) (offF fl (wL L).val (2 * t1.val) (2 * k.val)) 1 8) (shapeCast S16 (pair0_lt.sl.v1969 d L tab k r g1 g2 hR hin) hc16) = AccMath.accVec (rowF fl tab (wL L).val (2 * t1.val) (2 * k.val)) (offF fl (wL L).val (2 * t1.val) (2 * k.val)) 1 9 :=
      acc_step d L fl tab (wL L).val (2 * t1.val) (2 * k.val) 0 _ (hRA _) ⟨8, by decide⟩ ⟨1, by decide⟩ _ rfl _ hwA_8 _ (k1_off17_form ⟨0, by decide⟩ _ _) _ hc16
    have sA1_9 : addf (AccMath.accVec (rowF fl tab (wL L).val (2 * t1.val) (2 * k.val)) (offF fl (wL L).val (2 * t1.val) (2 * k.val)) 1 9) (shapeCast S16 (pair0_lt.sl.v2005 d L tab k r g1 g2 hR hin) hc16) = AccMath.accVec (rowF fl tab (wL L).val (2 * t1.val) (2 * k.val)) (offF fl (wL L).val (2 * t1.val) (2 * k.val)) 1 10 :=
      acc_step d L fl tab (wL L).val (2 * t1.val) (2 * k.val) 0 _ (hRA _) ⟨9, by decide⟩ ⟨1, by decide⟩ _ rfl _ hwA_9 _ (k1_off18_form ⟨0, by decide⟩ _ _) _ hc16
    have sA1_10 : addf (AccMath.accVec (rowF fl tab (wL L).val (2 * t1.val) (2 * k.val)) (offF fl (wL L).val (2 * t1.val) (2 * k.val)) 1 10) (shapeCast S16 (pair0_lt.sl.v2041 d L tab k r g1 g2 hR hin) hc16) = AccMath.accVec (rowF fl tab (wL L).val (2 * t1.val) (2 * k.val)) (offF fl (wL L).val (2 * t1.val) (2 * k.val)) 1 11 :=
      acc_step d L fl tab (wL L).val (2 * t1.val) (2 * k.val) 0 _ (hRA _) ⟨10, by decide⟩ ⟨1, by decide⟩ _ rfl _ hwA_10 _ (k1_off19_form ⟨0, by decide⟩ _ _) _ hc16
    have sA1_11 : addf (AccMath.accVec (rowF fl tab (wL L).val (2 * t1.val) (2 * k.val)) (offF fl (wL L).val (2 * t1.val) (2 * k.val)) 1 11) (shapeCast S16 (pair0_lt.sl.v2077 d L tab k r g1 g2 hR hin) hc16) = AccMath.accVec (rowF fl tab (wL L).val (2 * t1.val) (2 * k.val)) (offF fl (wL L).val (2 * t1.val) (2 * k.val)) 1 12 :=
      acc_step d L fl tab (wL L).val (2 * t1.val) (2 * k.val) 0 _ (hRA _) ⟨11, by decide⟩ ⟨1, by decide⟩ _ rfl _ hwA_11 _ (k1_off20_form ⟨0, by decide⟩ _ _) _ hc16
    have sA1_12 : addf (AccMath.accVec (rowF fl tab (wL L).val (2 * t1.val) (2 * k.val)) (offF fl (wL L).val (2 * t1.val) (2 * k.val)) 1 12) (shapeCast S16 (pair0_lt.sl.v2113 d L tab k r g1 g2 hR hin) hc16) = AccMath.accVec (rowF fl tab (wL L).val (2 * t1.val) (2 * k.val)) (offF fl (wL L).val (2 * t1.val) (2 * k.val)) 1 13 :=
      acc_step d L fl tab (wL L).val (2 * t1.val) (2 * k.val) 0 _ (hRA _) ⟨12, by decide⟩ ⟨1, by decide⟩ _ rfl _ hwA_12 _ (k1_off21_form ⟨0, by decide⟩ _ _) _ hc16
    have sA1_13 : addf (AccMath.accVec (rowF fl tab (wL L).val (2 * t1.val) (2 * k.val)) (offF fl (wL L).val (2 * t1.val) (2 * k.val)) 1 13) (shapeCast S16 (pair0_lt.sl.v2149 d L tab k r g1 g2 hR hin) hc16) = AccMath.accVec (rowF fl tab (wL L).val (2 * t1.val) (2 * k.val)) (offF fl (wL L).val (2 * t1.val) (2 * k.val)) 1 14 :=
      acc_step d L fl tab (wL L).val (2 * t1.val) (2 * k.val) 0 _ (hRA _) ⟨13, by decide⟩ ⟨1, by decide⟩ _ rfl _ hwA_13 _ (k1_off22_form ⟨0, by decide⟩ _ _) _ hc16
    have sA1_14 : addf (AccMath.accVec (rowF fl tab (wL L).val (2 * t1.val) (2 * k.val)) (offF fl (wL L).val (2 * t1.val) (2 * k.val)) 1 14) (shapeCast S16 (pair0_lt.sl.v2185 d L tab k r g1 g2 hR hin) hc16) = AccMath.accVec (rowF fl tab (wL L).val (2 * t1.val) (2 * k.val)) (offF fl (wL L).val (2 * t1.val) (2 * k.val)) 1 15 :=
      acc_step d L fl tab (wL L).val (2 * t1.val) (2 * k.val) 0 _ (hRA _) ⟨14, by decide⟩ ⟨1, by decide⟩ _ rfl _ hwA_14 _ (k1_off23_form ⟨0, by decide⟩ _ _) _ hc16
    have sA1_15 : addf (AccMath.accVec (rowF fl tab (wL L).val (2 * t1.val) (2 * k.val)) (offF fl (wL L).val (2 * t1.val) (2 * k.val)) 1 15) (shapeCast S16 (pair0_lt.sl.v2221 d L tab k r g1 g2 hR hin) hc16) = AccMath.accVec (rowF fl tab (wL L).val (2 * t1.val) (2 * k.val)) (offF fl (wL L).val (2 * t1.val) (2 * k.val)) 1 16 :=
      acc_step d L fl tab (wL L).val (2 * t1.val) (2 * k.val) 0 _ (hRA _) ⟨15, by decide⟩ ⟨1, by decide⟩ _ rfl _ hwA_15 _ (k1_off24_form ⟨0, by decide⟩ _ _) _ hc16
    have sA1_16 : addf (AccMath.accVec (rowF fl tab (wL L).val (2 * t1.val) (2 * k.val)) (offF fl (wL L).val (2 * t1.val) (2 * k.val)) 1 16) (shapeCast S16 (pair0_lt.sl.v1681_1 d L tab k r g1 g2 hR hin) hc16) = AccMath.accVec (rowF fl tab (wL L).val (2 * t1.val) (2 * k.val)) (offF fl (wL L).val (2 * t1.val) (2 * k.val)) 1 17 :=
      acc_step d L fl tab (wL L).val (2 * t1.val) (2 * k.val) 0 _ (hRA _) ⟨16, by decide⟩ ⟨1, by decide⟩ _ rfl _ hwA_16 _ (k1_off9_form ⟨1, by decide⟩ _ _) _ hc16
    have sA1_17 : addf (AccMath.accVec (rowF fl tab (wL L).val (2 * t1.val) (2 * k.val)) (offF fl (wL L).val (2 * t1.val) (2 * k.val)) 1 17) (shapeCast S16 (pair0_lt.sl.v1717_1 d L tab k r g1 g2 hR hin) hc16) = AccMath.accVec (rowF fl tab (wL L).val (2 * t1.val) (2 * k.val)) (offF fl (wL L).val (2 * t1.val) (2 * k.val)) 1 18 :=
      acc_step d L fl tab (wL L).val (2 * t1.val) (2 * k.val) 0 _ (hRA _) ⟨17, by decide⟩ ⟨1, by decide⟩ _ rfl _ hwA_17 _ (k1_off10_form ⟨1, by decide⟩ _ _) _ hc16
    have sA1_18 : addf (AccMath.accVec (rowF fl tab (wL L).val (2 * t1.val) (2 * k.val)) (offF fl (wL L).val (2 * t1.val) (2 * k.val)) 1 18) (shapeCast S16 (pair0_lt.sl.v1753_1 d L tab k r g1 g2 hR hin) hc16) = AccMath.accVec (rowF fl tab (wL L).val (2 * t1.val) (2 * k.val)) (offF fl (wL L).val (2 * t1.val) (2 * k.val)) 1 19 :=
      acc_step d L fl tab (wL L).val (2 * t1.val) (2 * k.val) 0 _ (hRA _) ⟨18, by decide⟩ ⟨1, by decide⟩ _ rfl _ hwA_18 _ (k1_off11_form ⟨1, by decide⟩ _ _) _ hc16
    have sA1_19 : addf (AccMath.accVec (rowF fl tab (wL L).val (2 * t1.val) (2 * k.val)) (offF fl (wL L).val (2 * t1.val) (2 * k.val)) 1 19) (shapeCast S16 (pair0_lt.sl.v1789_1 d L tab k r g1 g2 hR hin) hc16) = AccMath.accVec (rowF fl tab (wL L).val (2 * t1.val) (2 * k.val)) (offF fl (wL L).val (2 * t1.val) (2 * k.val)) 1 20 :=
      acc_step d L fl tab (wL L).val (2 * t1.val) (2 * k.val) 0 _ (hRA _) ⟨19, by decide⟩ ⟨1, by decide⟩ _ rfl _ hwA_19 _ (k1_off12_form ⟨1, by decide⟩ _ _) _ hc16
    have sA1_20 : addf (AccMath.accVec (rowF fl tab (wL L).val (2 * t1.val) (2 * k.val)) (offF fl (wL L).val (2 * t1.val) (2 * k.val)) 1 20) (shapeCast S16 (pair0_lt.sl.v1825_1 d L tab k r g1 g2 hR hin) hc16) = AccMath.accVec (rowF fl tab (wL L).val (2 * t1.val) (2 * k.val)) (offF fl (wL L).val (2 * t1.val) (2 * k.val)) 1 21 :=
      acc_step d L fl tab (wL L).val (2 * t1.val) (2 * k.val) 0 _ (hRA _) ⟨20, by decide⟩ ⟨1, by decide⟩ _ rfl _ hwA_20 _ (k1_off13_form ⟨1, by decide⟩ _ _) _ hc16
    have sA1_21 : addf (AccMath.accVec (rowF fl tab (wL L).val (2 * t1.val) (2 * k.val)) (offF fl (wL L).val (2 * t1.val) (2 * k.val)) 1 21) (shapeCast S16 (pair0_lt.sl.v1861_1 d L tab k r g1 g2 hR hin) hc16) = AccMath.accVec (rowF fl tab (wL L).val (2 * t1.val) (2 * k.val)) (offF fl (wL L).val (2 * t1.val) (2 * k.val)) 1 22 :=
      acc_step d L fl tab (wL L).val (2 * t1.val) (2 * k.val) 0 _ (hRA _) ⟨21, by decide⟩ ⟨1, by decide⟩ _ rfl _ hwA_21 _ (k1_off14_form ⟨1, by decide⟩ _ _) _ hc16
    have sA1_22 : addf (AccMath.accVec (rowF fl tab (wL L).val (2 * t1.val) (2 * k.val)) (offF fl (wL L).val (2 * t1.val) (2 * k.val)) 1 22) (shapeCast S16 (pair0_lt.sl.v1897_1 d L tab k r g1 g2 hR hin) hc16) = AccMath.accVec (rowF fl tab (wL L).val (2 * t1.val) (2 * k.val)) (offF fl (wL L).val (2 * t1.val) (2 * k.val)) 1 23 :=
      acc_step d L fl tab (wL L).val (2 * t1.val) (2 * k.val) 0 _ (hRA _) ⟨22, by decide⟩ ⟨1, by decide⟩ _ rfl _ hwA_22 _ (k1_off15_form ⟨1, by decide⟩ _ _) _ hc16
    have sA1_23 : addf (AccMath.accVec (rowF fl tab (wL L).val (2 * t1.val) (2 * k.val)) (offF fl (wL L).val (2 * t1.val) (2 * k.val)) 1 23) (shapeCast S16 (pair0_lt.sl.v1933_1 d L tab k r g1 g2 hR hin) hc16) = AccMath.accVec (rowF fl tab (wL L).val (2 * t1.val) (2 * k.val)) (offF fl (wL L).val (2 * t1.val) (2 * k.val)) 1 24 :=
      acc_step d L fl tab (wL L).val (2 * t1.val) (2 * k.val) 0 _ (hRA _) ⟨23, by decide⟩ ⟨1, by decide⟩ _ rfl _ hwA_23 _ (k1_off16_form ⟨1, by decide⟩ _ _) _ hc16
    have sA1_24 : addf (AccMath.accVec (rowF fl tab (wL L).val (2 * t1.val) (2 * k.val)) (offF fl (wL L).val (2 * t1.val) (2 * k.val)) 1 24) (shapeCast S16 (pair0_lt.sl.v1969_1 d L tab k r g1 g2 hR hin) hc16) = AccMath.accVec (rowF fl tab (wL L).val (2 * t1.val) (2 * k.val)) (offF fl (wL L).val (2 * t1.val) (2 * k.val)) 1 25 :=
      acc_step d L fl tab (wL L).val (2 * t1.val) (2 * k.val) 0 _ (hRA _) ⟨24, by decide⟩ ⟨1, by decide⟩ _ rfl _ hwA_24 _ (k1_off17_form ⟨1, by decide⟩ _ _) _ hc16
    have sA1_25 : addf (AccMath.accVec (rowF fl tab (wL L).val (2 * t1.val) (2 * k.val)) (offF fl (wL L).val (2 * t1.val) (2 * k.val)) 1 25) (shapeCast S16 (pair0_lt.sl.v2005_1 d L tab k r g1 g2 hR hin) hc16) = AccMath.accVec (rowF fl tab (wL L).val (2 * t1.val) (2 * k.val)) (offF fl (wL L).val (2 * t1.val) (2 * k.val)) 1 26 :=
      acc_step d L fl tab (wL L).val (2 * t1.val) (2 * k.val) 0 _ (hRA _) ⟨25, by decide⟩ ⟨1, by decide⟩ _ rfl _ hwA_25 _ (k1_off18_form ⟨1, by decide⟩ _ _) _ hc16
    have sA1_26 : addf (AccMath.accVec (rowF fl tab (wL L).val (2 * t1.val) (2 * k.val)) (offF fl (wL L).val (2 * t1.val) (2 * k.val)) 1 26) (shapeCast S16 (pair0_lt.sl.v2041_1 d L tab k r g1 g2 hR hin) hc16) = AccMath.accVec (rowF fl tab (wL L).val (2 * t1.val) (2 * k.val)) (offF fl (wL L).val (2 * t1.val) (2 * k.val)) 1 27 :=
      acc_step d L fl tab (wL L).val (2 * t1.val) (2 * k.val) 0 _ (hRA _) ⟨26, by decide⟩ ⟨1, by decide⟩ _ rfl _ hwA_26 _ (k1_off19_form ⟨1, by decide⟩ _ _) _ hc16
    have sA1_27 : addf (AccMath.accVec (rowF fl tab (wL L).val (2 * t1.val) (2 * k.val)) (offF fl (wL L).val (2 * t1.val) (2 * k.val)) 1 27) (shapeCast S16 (pair0_lt.sl.v2077_1 d L tab k r g1 g2 hR hin) hc16) = AccMath.accVec (rowF fl tab (wL L).val (2 * t1.val) (2 * k.val)) (offF fl (wL L).val (2 * t1.val) (2 * k.val)) 1 28 :=
      acc_step d L fl tab (wL L).val (2 * t1.val) (2 * k.val) 0 _ (hRA _) ⟨27, by decide⟩ ⟨1, by decide⟩ _ rfl _ hwA_27 _ (k1_off20_form ⟨1, by decide⟩ _ _) _ hc16
    have sA1_28 : addf (AccMath.accVec (rowF fl tab (wL L).val (2 * t1.val) (2 * k.val)) (offF fl (wL L).val (2 * t1.val) (2 * k.val)) 1 28) (shapeCast S16 (pair0_lt.sl.v2113_1 d L tab k r g1 g2 hR hin) hc16) = AccMath.accVec (rowF fl tab (wL L).val (2 * t1.val) (2 * k.val)) (offF fl (wL L).val (2 * t1.val) (2 * k.val)) 1 29 :=
      acc_step d L fl tab (wL L).val (2 * t1.val) (2 * k.val) 0 _ (hRA _) ⟨28, by decide⟩ ⟨1, by decide⟩ _ rfl _ hwA_28 _ (k1_off21_form ⟨1, by decide⟩ _ _) _ hc16
    have sA1_29 : addf (AccMath.accVec (rowF fl tab (wL L).val (2 * t1.val) (2 * k.val)) (offF fl (wL L).val (2 * t1.val) (2 * k.val)) 1 29) (shapeCast S16 (pair0_lt.sl.v2149_1 d L tab k r g1 g2 hR hin) hc16) = AccMath.accVec (rowF fl tab (wL L).val (2 * t1.val) (2 * k.val)) (offF fl (wL L).val (2 * t1.val) (2 * k.val)) 1 30 :=
      acc_step d L fl tab (wL L).val (2 * t1.val) (2 * k.val) 0 _ (hRA _) ⟨29, by decide⟩ ⟨1, by decide⟩ _ rfl _ hwA_29 _ (k1_off22_form ⟨1, by decide⟩ _ _) _ hc16
    have sA1_30 : addf (AccMath.accVec (rowF fl tab (wL L).val (2 * t1.val) (2 * k.val)) (offF fl (wL L).val (2 * t1.val) (2 * k.val)) 1 30) (shapeCast S16 (pair0_lt.sl.v2185_1 d L tab k r g1 g2 hR hin) hc16) = AccMath.accVec (rowF fl tab (wL L).val (2 * t1.val) (2 * k.val)) (offF fl (wL L).val (2 * t1.val) (2 * k.val)) 1 31 :=
      acc_step d L fl tab (wL L).val (2 * t1.val) (2 * k.val) 0 _ (hRA _) ⟨30, by decide⟩ ⟨1, by decide⟩ _ rfl _ hwA_30 _ (k1_off23_form ⟨1, by decide⟩ _ _) _ hc16
    have sA1_31 : addf (AccMath.accVec (rowF fl tab (wL L).val (2 * t1.val) (2 * k.val)) (offF fl (wL L).val (2 * t1.val) (2 * k.val)) 1 31) (shapeCast S16 (pair0_lt.sl.v2221_1 d L tab k r g1 g2 hR hin) hc16) = AccMath.accVec (rowF fl tab (wL L).val (2 * t1.val) (2 * k.val)) (offF fl (wL L).val (2 * t1.val) (2 * k.val)) 1 32 :=
      acc_step d L fl tab (wL L).val (2 * t1.val) (2 * k.val) 0 _ (hRA _) ⟨31, by decide⟩ ⟨1, by decide⟩ _ rfl _ hwA_31 _ (k1_off24_form ⟨1, by decide⟩ _ _) _ hc16
    have sA1_32 : addf (AccMath.accVec (rowF fl tab (wL L).val (2 * t1.val) (2 * k.val)) (offF fl (wL L).val (2 * t1.val) (2 * k.val)) 1 32) (shapeCast S16 (pair0_lt.sl.v1681_2 d L tab k r g1 g2 hR hin) hc16) = AccMath.accVec (rowF fl tab (wL L).val (2 * t1.val) (2 * k.val)) (offF fl (wL L).val (2 * t1.val) (2 * k.val)) 1 33 :=
      acc_step d L fl tab (wL L).val (2 * t1.val) (2 * k.val) 0 _ (hRA _) ⟨32, by decide⟩ ⟨1, by decide⟩ _ rfl _ hwA_32 _ (k1_off9_form ⟨2, by decide⟩ _ _) _ hc16
    have sA1_33 : addf (AccMath.accVec (rowF fl tab (wL L).val (2 * t1.val) (2 * k.val)) (offF fl (wL L).val (2 * t1.val) (2 * k.val)) 1 33) (shapeCast S16 (pair0_lt.sl.v1717_2 d L tab k r g1 g2 hR hin) hc16) = AccMath.accVec (rowF fl tab (wL L).val (2 * t1.val) (2 * k.val)) (offF fl (wL L).val (2 * t1.val) (2 * k.val)) 1 34 :=
      acc_step d L fl tab (wL L).val (2 * t1.val) (2 * k.val) 0 _ (hRA _) ⟨33, by decide⟩ ⟨1, by decide⟩ _ rfl _ hwA_33 _ (k1_off10_form ⟨2, by decide⟩ _ _) _ hc16
    have sA1_34 : addf (AccMath.accVec (rowF fl tab (wL L).val (2 * t1.val) (2 * k.val)) (offF fl (wL L).val (2 * t1.val) (2 * k.val)) 1 34) (shapeCast S16 (pair0_lt.sl.v1753_2 d L tab k r g1 g2 hR hin) hc16) = AccMath.accVec (rowF fl tab (wL L).val (2 * t1.val) (2 * k.val)) (offF fl (wL L).val (2 * t1.val) (2 * k.val)) 1 35 :=
      acc_step d L fl tab (wL L).val (2 * t1.val) (2 * k.val) 0 _ (hRA _) ⟨34, by decide⟩ ⟨1, by decide⟩ _ rfl _ hwA_34 _ (k1_off11_form ⟨2, by decide⟩ _ _) _ hc16
    have sA1_35 : addf (AccMath.accVec (rowF fl tab (wL L).val (2 * t1.val) (2 * k.val)) (offF fl (wL L).val (2 * t1.val) (2 * k.val)) 1 35) (shapeCast S16 (pair0_lt.sl.v1789_2 d L tab k r g1 g2 hR hin) hc16) = AccMath.accVec (rowF fl tab (wL L).val (2 * t1.val) (2 * k.val)) (offF fl (wL L).val (2 * t1.val) (2 * k.val)) 1 36 :=
      acc_step d L fl tab (wL L).val (2 * t1.val) (2 * k.val) 0 _ (hRA _) ⟨35, by decide⟩ ⟨1, by decide⟩ _ rfl _ hwA_35 _ (k1_off12_form ⟨2, by decide⟩ _ _) _ hc16
    have sA1_36 : addf (AccMath.accVec (rowF fl tab (wL L).val (2 * t1.val) (2 * k.val)) (offF fl (wL L).val (2 * t1.val) (2 * k.val)) 1 36) (shapeCast S16 (pair0_lt.sl.v1825_2 d L tab k r g1 g2 hR hin) hc16) = AccMath.accVec (rowF fl tab (wL L).val (2 * t1.val) (2 * k.val)) (offF fl (wL L).val (2 * t1.val) (2 * k.val)) 1 37 :=
      acc_step d L fl tab (wL L).val (2 * t1.val) (2 * k.val) 0 _ (hRA _) ⟨36, by decide⟩ ⟨1, by decide⟩ _ rfl _ hwA_36 _ (k1_off13_form ⟨2, by decide⟩ _ _) _ hc16
    have sA1_37 : addf (AccMath.accVec (rowF fl tab (wL L).val (2 * t1.val) (2 * k.val)) (offF fl (wL L).val (2 * t1.val) (2 * k.val)) 1 37) (shapeCast S16 (pair0_lt.sl.v1861_2 d L tab k r g1 g2 hR hin) hc16) = AccMath.accVec (rowF fl tab (wL L).val (2 * t1.val) (2 * k.val)) (offF fl (wL L).val (2 * t1.val) (2 * k.val)) 1 38 :=
      acc_step d L fl tab (wL L).val (2 * t1.val) (2 * k.val) 0 _ (hRA _) ⟨37, by decide⟩ ⟨1, by decide⟩ _ rfl _ hwA_37 _ (k1_off14_form ⟨2, by decide⟩ _ _) _ hc16
    have sA1_38 : addf (AccMath.accVec (rowF fl tab (wL L).val (2 * t1.val) (2 * k.val)) (offF fl (wL L).val (2 * t1.val) (2 * k.val)) 1 38) (shapeCast S16 (pair0_lt.sl.v1897_2 d L tab k r g1 g2 hR hin) hc16) = AccMath.accVec (rowF fl tab (wL L).val (2 * t1.val) (2 * k.val)) (offF fl (wL L).val (2 * t1.val) (2 * k.val)) 1 39 :=
      acc_step d L fl tab (wL L).val (2 * t1.val) (2 * k.val) 0 _ (hRA _) ⟨38, by decide⟩ ⟨1, by decide⟩ _ rfl _ hwA_38 _ (k1_off15_form ⟨2, by decide⟩ _ _) _ hc16
    have sA1_39 : addf (AccMath.accVec (rowF fl tab (wL L).val (2 * t1.val) (2 * k.val)) (offF fl (wL L).val (2 * t1.val) (2 * k.val)) 1 39) (shapeCast S16 (pair0_lt.sl.v1933_2 d L tab k r g1 g2 hR hin) hc16) = AccMath.accVec (rowF fl tab (wL L).val (2 * t1.val) (2 * k.val)) (offF fl (wL L).val (2 * t1.val) (2 * k.val)) 1 40 :=
      acc_step d L fl tab (wL L).val (2 * t1.val) (2 * k.val) 0 _ (hRA _) ⟨39, by decide⟩ ⟨1, by decide⟩ _ rfl _ hwA_39 _ (k1_off16_form ⟨2, by decide⟩ _ _) _ hc16
    have sA1_40 : addf (AccMath.accVec (rowF fl tab (wL L).val (2 * t1.val) (2 * k.val)) (offF fl (wL L).val (2 * t1.val) (2 * k.val)) 1 40) (shapeCast S16 (pair0_lt.sl.v1969_2 d L tab k r g1 g2 hR hin) hc16) = AccMath.accVec (rowF fl tab (wL L).val (2 * t1.val) (2 * k.val)) (offF fl (wL L).val (2 * t1.val) (2 * k.val)) 1 41 :=
      acc_step d L fl tab (wL L).val (2 * t1.val) (2 * k.val) 0 _ (hRA _) ⟨40, by decide⟩ ⟨1, by decide⟩ _ rfl _ hwA_40 _ (k1_off17_form ⟨2, by decide⟩ _ _) _ hc16
    have sA1_41 : addf (AccMath.accVec (rowF fl tab (wL L).val (2 * t1.val) (2 * k.val)) (offF fl (wL L).val (2 * t1.val) (2 * k.val)) 1 41) (shapeCast S16 (pair0_lt.sl.v2005_2 d L tab k r g1 g2 hR hin) hc16) = AccMath.accVec (rowF fl tab (wL L).val (2 * t1.val) (2 * k.val)) (offF fl (wL L).val (2 * t1.val) (2 * k.val)) 1 42 :=
      acc_step d L fl tab (wL L).val (2 * t1.val) (2 * k.val) 0 _ (hRA _) ⟨41, by decide⟩ ⟨1, by decide⟩ _ rfl _ hwA_41 _ (k1_off18_form ⟨2, by decide⟩ _ _) _ hc16
    have sA1_42 : addf (AccMath.accVec (rowF fl tab (wL L).val (2 * t1.val) (2 * k.val)) (offF fl (wL L).val (2 * t1.val) (2 * k.val)) 1 42) (shapeCast S16 (pair0_lt.sl.v2041_2 d L tab k r g1 g2 hR hin) hc16) = AccMath.accVec (rowF fl tab (wL L).val (2 * t1.val) (2 * k.val)) (offF fl (wL L).val (2 * t1.val) (2 * k.val)) 1 43 :=
      acc_step d L fl tab (wL L).val (2 * t1.val) (2 * k.val) 0 _ (hRA _) ⟨42, by decide⟩ ⟨1, by decide⟩ _ rfl _ hwA_42 _ (k1_off19_form ⟨2, by decide⟩ _ _) _ hc16
    have sA1_43 : addf (AccMath.accVec (rowF fl tab (wL L).val (2 * t1.val) (2 * k.val)) (offF fl (wL L).val (2 * t1.val) (2 * k.val)) 1 43) (shapeCast S16 (pair0_lt.sl.v2077_2 d L tab k r g1 g2 hR hin) hc16) = AccMath.accVec (rowF fl tab (wL L).val (2 * t1.val) (2 * k.val)) (offF fl (wL L).val (2 * t1.val) (2 * k.val)) 1 44 :=
      acc_step d L fl tab (wL L).val (2 * t1.val) (2 * k.val) 0 _ (hRA _) ⟨43, by decide⟩ ⟨1, by decide⟩ _ rfl _ hwA_43 _ (k1_off20_form ⟨2, by decide⟩ _ _) _ hc16
    have sA1_44 : addf (AccMath.accVec (rowF fl tab (wL L).val (2 * t1.val) (2 * k.val)) (offF fl (wL L).val (2 * t1.val) (2 * k.val)) 1 44) (shapeCast S16 (pair0_lt.sl.v2113_2 d L tab k r g1 g2 hR hin) hc16) = AccMath.accVec (rowF fl tab (wL L).val (2 * t1.val) (2 * k.val)) (offF fl (wL L).val (2 * t1.val) (2 * k.val)) 1 45 :=
      acc_step d L fl tab (wL L).val (2 * t1.val) (2 * k.val) 0 _ (hRA _) ⟨44, by decide⟩ ⟨1, by decide⟩ _ rfl _ hwA_44 _ (k1_off21_form ⟨2, by decide⟩ _ _) _ hc16
    have sA1_45 : addf (AccMath.accVec (rowF fl tab (wL L).val (2 * t1.val) (2 * k.val)) (offF fl (wL L).val (2 * t1.val) (2 * k.val)) 1 45) (shapeCast S16 (pair0_lt.sl.v2149_2 d L tab k r g1 g2 hR hin) hc16) = AccMath.accVec (rowF fl tab (wL L).val (2 * t1.val) (2 * k.val)) (offF fl (wL L).val (2 * t1.val) (2 * k.val)) 1 46 :=
      acc_step d L fl tab (wL L).val (2 * t1.val) (2 * k.val) 0 _ (hRA _) ⟨45, by decide⟩ ⟨1, by decide⟩ _ rfl _ hwA_45 _ (k1_off22_form ⟨2, by decide⟩ _ _) _ hc16
    have sA1_46 : addf (AccMath.accVec (rowF fl tab (wL L).val (2 * t1.val) (2 * k.val)) (offF fl (wL L).val (2 * t1.val) (2 * k.val)) 1 46) (shapeCast S16 (pair0_lt.sl.v2185_2 d L tab k r g1 g2 hR hin) hc16) = AccMath.accVec (rowF fl tab (wL L).val (2 * t1.val) (2 * k.val)) (offF fl (wL L).val (2 * t1.val) (2 * k.val)) 1 47 :=
      acc_step d L fl tab (wL L).val (2 * t1.val) (2 * k.val) 0 _ (hRA _) ⟨46, by decide⟩ ⟨1, by decide⟩ _ rfl _ hwA_46 _ (k1_off23_form ⟨2, by decide⟩ _ _) _ hc16
    have sA1_47 : addf (AccMath.accVec (rowF fl tab (wL L).val (2 * t1.val) (2 * k.val)) (offF fl (wL L).val (2 * t1.val) (2 * k.val)) 1 47) (shapeCast S16 (pair0_lt.sl.v2221_2 d L tab k r g1 g2 hR hin) hc16) = AccMath.accVec (rowF fl tab (wL L).val (2 * t1.val) (2 * k.val)) (offF fl (wL L).val (2 * t1.val) (2 * k.val)) 1 48 :=
      acc_step d L fl tab (wL L).val (2 * t1.val) (2 * k.val) 0 _ (hRA _) ⟨47, by decide⟩ ⟨1, by decide⟩ _ rfl _ hwA_47 _ (k1_off24_form ⟨2, by decide⟩ _ _) _ hc16
    have sA1_48 : addf (AccMath.accVec (rowF fl tab (wL L).val (2 * t1.val) (2 * k.val)) (offF fl (wL L).val (2 * t1.val) (2 * k.val)) 1 48) (shapeCast S16 (pair0_lt.sl.v1470 d L tab k r g1 g2 hR hin) hc16) = AccMath.accVec (rowF fl tab (wL L).val (2 * t1.val) (2 * k.val)) (offF fl (wL L).val (2 * t1.val) (2 * k.val)) 1 49 :=
      acc_step d L fl tab (wL L).val (2 * t1.val) (2 * k.val) 0 _ (hRA _) ⟨48, by decide⟩ ⟨1, by decide⟩ _ rfl _ hwA_48 _ (k1_off26_form _ _) _ hc16
    have sA1_49 : addf (AccMath.accVec (rowF fl tab (wL L).val (2 * t1.val) (2 * k.val)) (offF fl (wL L).val (2 * t1.val) (2 * k.val)) 1 49) (shapeCast S16 (pair0_lt.sl.v1504 d L tab k r g1 g2 hR hin) hc16) = AccMath.accVec (rowF fl tab (wL L).val (2 * t1.val) (2 * k.val)) (offF fl (wL L).val (2 * t1.val) (2 * k.val)) 1 50 :=
      acc_step d L fl tab (wL L).val (2 * t1.val) (2 * k.val) 0 _ (hRA _) ⟨49, by decide⟩ ⟨1, by decide⟩ _ rfl _ hwA_49 _ (k1_off27_form _ _) _ hc16
    have hPA1 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val)) (offF fl (wL L).val (2 * t1.val) (2 * k.val)) 1 0) (shapeCast S16 (pair0_lt.sl.v1681 d L tab k r g1 g2 hR hin) hc16)) (shapeCast S16 (pair0_lt.sl.v1717 d L tab k r g1 g2 hR hin) hc16)) (shapeCast S16 (pair0_lt.sl.v1753 d L tab k r g1 g2 hR hin) hc16)) (shapeCast S16 (pair0_lt.sl.v1789 d L tab k r g1 g2 hR hin) hc16)) (shapeCast S16 (pair0_lt.sl.v1825 d L tab k r g1 g2 hR hin) hc16)) (shapeCast S16 (pair0_lt.sl.v1861 d L tab k r g1 g2 hR hin) hc16)) (shapeCast S16 (pair0_lt.sl.v1897 d L tab k r g1 g2 hR hin) hc16)) (shapeCast S16 (pair0_lt.sl.v1933 d L tab k r g1 g2 hR hin) hc16)) (shapeCast S16 (pair0_lt.sl.v1969 d L tab k r g1 g2 hR hin) hc16)) (shapeCast S16 (pair0_lt.sl.v2005 d L tab k r g1 g2 hR hin) hc16)) (shapeCast S16 (pair0_lt.sl.v2041 d L tab k r g1 g2 hR hin) hc16)) (shapeCast S16 (pair0_lt.sl.v2077 d L tab k r g1 g2 hR hin) hc16)) (shapeCast S16 (pair0_lt.sl.v2113 d L tab k r g1 g2 hR hin) hc16)) (shapeCast S16 (pair0_lt.sl.v2149 d L tab k r g1 g2 hR hin) hc16)) (shapeCast S16 (pair0_lt.sl.v2185 d L tab k r g1 g2 hR hin) hc16)) (shapeCast S16 (pair0_lt.sl.v2221 d L tab k r g1 g2 hR hin) hc16)) (shapeCast S16 (pair0_lt.sl.v1681_1 d L tab k r g1 g2 hR hin) hc16)) (shapeCast S16 (pair0_lt.sl.v1717_1 d L tab k r g1 g2 hR hin) hc16)) (shapeCast S16 (pair0_lt.sl.v1753_1 d L tab k r g1 g2 hR hin) hc16)) (shapeCast S16 (pair0_lt.sl.v1789_1 d L tab k r g1 g2 hR hin) hc16)) (shapeCast S16 (pair0_lt.sl.v1825_1 d L tab k r g1 g2 hR hin) hc16)) (shapeCast S16 (pair0_lt.sl.v1861_1 d L tab k r g1 g2 hR hin) hc16)) (shapeCast S16 (pair0_lt.sl.v1897_1 d L tab k r g1 g2 hR hin) hc16)) (shapeCast S16 (pair0_lt.sl.v1933_1 d L tab k r g1 g2 hR hin) hc16)) (shapeCast S16 (pair0_lt.sl.v1969_1 d L tab k r g1 g2 hR hin) hc16)) (shapeCast S16 (pair0_lt.sl.v2005_1 d L tab k r g1 g2 hR hin) hc16)) (shapeCast S16 (pair0_lt.sl.v2041_1 d L tab k r g1 g2 hR hin) hc16)) (shapeCast S16 (pair0_lt.sl.v2077_1 d L tab k r g1 g2 hR hin) hc16)) (shapeCast S16 (pair0_lt.sl.v2113_1 d L tab k r g1 g2 hR hin) hc16)) (shapeCast S16 (pair0_lt.sl.v2149_1 d L tab k r g1 g2 hR hin) hc16)) (shapeCast S16 (pair0_lt.sl.v2185_1 d L tab k r g1 g2 hR hin) hc16)) (shapeCast S16 (pair0_lt.sl.v2221_1 d L tab k r g1 g2 hR hin) hc16)) (shapeCast S16 (pair0_lt.sl.v1681_2 d L tab k r g1 g2 hR hin) hc16)) (shapeCast S16 (pair0_lt.sl.v1717_2 d L tab k r g1 g2 hR hin) hc16)) (shapeCast S16 (pair0_lt.sl.v1753_2 d L tab k r g1 g2 hR hin) hc16)) (shapeCast S16 (pair0_lt.sl.v1789_2 d L tab k r g1 g2 hR hin) hc16)) (shapeCast S16 (pair0_lt.sl.v1825_2 d L tab k r g1 g2 hR hin) hc16)) (shapeCast S16 (pair0_lt.sl.v1861_2 d L tab k r g1 g2 hR hin) hc16)) (shapeCast S16 (pair0_lt.sl.v1897_2 d L tab k r g1 g2 hR hin) hc16)) (shapeCast S16 (pair0_lt.sl.v1933_2 d L tab k r g1 g2 hR hin) hc16)) (shapeCast S16 (pair0_lt.sl.v1969_2 d L tab k r g1 g2 hR hin) hc16)) (shapeCast S16 (pair0_lt.sl.v2005_2 d L tab k r g1 g2 hR hin) hc16)) (shapeCast S16 (pair0_lt.sl.v2041_2 d L tab k r g1 g2 hR hin) hc16)) (shapeCast S16 (pair0_lt.sl.v2077_2 d L tab k r g1 g2 hR hin) hc16)) (shapeCast S16 (pair0_lt.sl.v2113_2 d L tab k r g1 g2 hR hin) hc16)) (shapeCast S16 (pair0_lt.sl.v2149_2 d L tab k r g1 g2 hR hin) hc16)) (shapeCast S16 (pair0_lt.sl.v2185_2 d L tab k r g1 g2 hR hin) hc16)) (shapeCast S16 (pair0_lt.sl.v2221_2 d L tab k r g1 g2 hR hin) hc16)) (shapeCast S16 (pair0_lt.sl.v1470 d L tab k r g1 g2 hR hin) hc16)) (shapeCast S16 (pair0_lt.sl.v1504 d L tab k r g1 g2 hR hin) hc16)) hc1 x = Spec.bagPartial fl tab (128 * (wL L).val + 16 * (2 * t1.val) + (2 * k.val)) (16 * 1 + (x 2).val) 50 := fun x => by
      rw [sA1_0, sA1_1, sA1_2, sA1_3, sA1_4, sA1_5, sA1_6, sA1_7, sA1_8, sA1_9, sA1_10, sA1_11, sA1_12, sA1_13, sA1_14, sA1_15, sA1_16, sA1_17, sA1_18, sA1_19, sA1_20, sA1_21, sA1_22, sA1_23, sA1_24, sA1_25, sA1_26, sA1_27, sA1_28, sA1_29, sA1_30, sA1_31, sA1_32, sA1_33, sA1_34, sA1_35, sA1_36, sA1_37, sA1_38, sA1_39, sA1_40, sA1_41, sA1_42, sA1_43, sA1_44, sA1_45, sA1_46, sA1_47, sA1_48, sA1_49]; exact payload_ok fl tab (wL L).val (2 * t1.val) (2 * k.val) ⟨1, by decide⟩ hc1 x
    have sA2_0 : addf (AccMath.accVec (rowF fl tab (wL L).val (2 * t1.val) (2 * k.val)) (offF fl (wL L).val (2 * t1.val) (2 * k.val)) 2 0) (shapeCast S16 (pair0_lt.sl.v1689 d L tab k r g1 g2 hR hin) hc16) = AccMath.accVec (rowF fl tab (wL L).val (2 * t1.val) (2 * k.val)) (offF fl (wL L).val (2 * t1.val) (2 * k.val)) 2 1 :=
      acc_step d L fl tab (wL L).val (2 * t1.val) (2 * k.val) 0 _ (hRA _) ⟨0, by decide⟩ ⟨2, by decide⟩ _ rfl _ hwA_0 _ (k1_off9_form ⟨0, by decide⟩ _ _) _ hc16
    have sA2_1 : addf (AccMath.accVec (rowF fl tab (wL L).val (2 * t1.val) (2 * k.val)) (offF fl (wL L).val (2 * t1.val) (2 * k.val)) 2 1) (shapeCast S16 (pair0_lt.sl.v1725 d L tab k r g1 g2 hR hin) hc16) = AccMath.accVec (rowF fl tab (wL L).val (2 * t1.val) (2 * k.val)) (offF fl (wL L).val (2 * t1.val) (2 * k.val)) 2 2 :=
      acc_step d L fl tab (wL L).val (2 * t1.val) (2 * k.val) 0 _ (hRA _) ⟨1, by decide⟩ ⟨2, by decide⟩ _ rfl _ hwA_1 _ (k1_off10_form ⟨0, by decide⟩ _ _) _ hc16
    have sA2_2 : addf (AccMath.accVec (rowF fl tab (wL L).val (2 * t1.val) (2 * k.val)) (offF fl (wL L).val (2 * t1.val) (2 * k.val)) 2 2) (shapeCast S16 (pair0_lt.sl.v1761 d L tab k r g1 g2 hR hin) hc16) = AccMath.accVec (rowF fl tab (wL L).val (2 * t1.val) (2 * k.val)) (offF fl (wL L).val (2 * t1.val) (2 * k.val)) 2 3 :=
      acc_step d L fl tab (wL L).val (2 * t1.val) (2 * k.val) 0 _ (hRA _) ⟨2, by decide⟩ ⟨2, by decide⟩ _ rfl _ hwA_2 _ (k1_off11_form ⟨0, by decide⟩ _ _) _ hc16
    have sA2_3 : addf (AccMath.accVec (rowF fl tab (wL L).val (2 * t1.val) (2 * k.val)) (offF fl (wL L).val (2 * t1.val) (2 * k.val)) 2 3) (shapeCast S16 (pair0_lt.sl.v1797 d L tab k r g1 g2 hR hin) hc16) = AccMath.accVec (rowF fl tab (wL L).val (2 * t1.val) (2 * k.val)) (offF fl (wL L).val (2 * t1.val) (2 * k.val)) 2 4 :=
      acc_step d L fl tab (wL L).val (2 * t1.val) (2 * k.val) 0 _ (hRA _) ⟨3, by decide⟩ ⟨2, by decide⟩ _ rfl _ hwA_3 _ (k1_off12_form ⟨0, by decide⟩ _ _) _ hc16
    have sA2_4 : addf (AccMath.accVec (rowF fl tab (wL L).val (2 * t1.val) (2 * k.val)) (offF fl (wL L).val (2 * t1.val) (2 * k.val)) 2 4) (shapeCast S16 (pair0_lt.sl.v1833 d L tab k r g1 g2 hR hin) hc16) = AccMath.accVec (rowF fl tab (wL L).val (2 * t1.val) (2 * k.val)) (offF fl (wL L).val (2 * t1.val) (2 * k.val)) 2 5 :=
      acc_step d L fl tab (wL L).val (2 * t1.val) (2 * k.val) 0 _ (hRA _) ⟨4, by decide⟩ ⟨2, by decide⟩ _ rfl _ hwA_4 _ (k1_off13_form ⟨0, by decide⟩ _ _) _ hc16
    have sA2_5 : addf (AccMath.accVec (rowF fl tab (wL L).val (2 * t1.val) (2 * k.val)) (offF fl (wL L).val (2 * t1.val) (2 * k.val)) 2 5) (shapeCast S16 (pair0_lt.sl.v1869 d L tab k r g1 g2 hR hin) hc16) = AccMath.accVec (rowF fl tab (wL L).val (2 * t1.val) (2 * k.val)) (offF fl (wL L).val (2 * t1.val) (2 * k.val)) 2 6 :=
      acc_step d L fl tab (wL L).val (2 * t1.val) (2 * k.val) 0 _ (hRA _) ⟨5, by decide⟩ ⟨2, by decide⟩ _ rfl _ hwA_5 _ (k1_off14_form ⟨0, by decide⟩ _ _) _ hc16
    have sA2_6 : addf (AccMath.accVec (rowF fl tab (wL L).val (2 * t1.val) (2 * k.val)) (offF fl (wL L).val (2 * t1.val) (2 * k.val)) 2 6) (shapeCast S16 (pair0_lt.sl.v1905 d L tab k r g1 g2 hR hin) hc16) = AccMath.accVec (rowF fl tab (wL L).val (2 * t1.val) (2 * k.val)) (offF fl (wL L).val (2 * t1.val) (2 * k.val)) 2 7 :=
      acc_step d L fl tab (wL L).val (2 * t1.val) (2 * k.val) 0 _ (hRA _) ⟨6, by decide⟩ ⟨2, by decide⟩ _ rfl _ hwA_6 _ (k1_off15_form ⟨0, by decide⟩ _ _) _ hc16
    have sA2_7 : addf (AccMath.accVec (rowF fl tab (wL L).val (2 * t1.val) (2 * k.val)) (offF fl (wL L).val (2 * t1.val) (2 * k.val)) 2 7) (shapeCast S16 (pair0_lt.sl.v1941 d L tab k r g1 g2 hR hin) hc16) = AccMath.accVec (rowF fl tab (wL L).val (2 * t1.val) (2 * k.val)) (offF fl (wL L).val (2 * t1.val) (2 * k.val)) 2 8 :=
      acc_step d L fl tab (wL L).val (2 * t1.val) (2 * k.val) 0 _ (hRA _) ⟨7, by decide⟩ ⟨2, by decide⟩ _ rfl _ hwA_7 _ (k1_off16_form ⟨0, by decide⟩ _ _) _ hc16
    have sA2_8 : addf (AccMath.accVec (rowF fl tab (wL L).val (2 * t1.val) (2 * k.val)) (offF fl (wL L).val (2 * t1.val) (2 * k.val)) 2 8) (shapeCast S16 (pair0_lt.sl.v1977 d L tab k r g1 g2 hR hin) hc16) = AccMath.accVec (rowF fl tab (wL L).val (2 * t1.val) (2 * k.val)) (offF fl (wL L).val (2 * t1.val) (2 * k.val)) 2 9 :=
      acc_step d L fl tab (wL L).val (2 * t1.val) (2 * k.val) 0 _ (hRA _) ⟨8, by decide⟩ ⟨2, by decide⟩ _ rfl _ hwA_8 _ (k1_off17_form ⟨0, by decide⟩ _ _) _ hc16
    have sA2_9 : addf (AccMath.accVec (rowF fl tab (wL L).val (2 * t1.val) (2 * k.val)) (offF fl (wL L).val (2 * t1.val) (2 * k.val)) 2 9) (shapeCast S16 (pair0_lt.sl.v2013 d L tab k r g1 g2 hR hin) hc16) = AccMath.accVec (rowF fl tab (wL L).val (2 * t1.val) (2 * k.val)) (offF fl (wL L).val (2 * t1.val) (2 * k.val)) 2 10 :=
      acc_step d L fl tab (wL L).val (2 * t1.val) (2 * k.val) 0 _ (hRA _) ⟨9, by decide⟩ ⟨2, by decide⟩ _ rfl _ hwA_9 _ (k1_off18_form ⟨0, by decide⟩ _ _) _ hc16
    have sA2_10 : addf (AccMath.accVec (rowF fl tab (wL L).val (2 * t1.val) (2 * k.val)) (offF fl (wL L).val (2 * t1.val) (2 * k.val)) 2 10) (shapeCast S16 (pair0_lt.sl.v2049 d L tab k r g1 g2 hR hin) hc16) = AccMath.accVec (rowF fl tab (wL L).val (2 * t1.val) (2 * k.val)) (offF fl (wL L).val (2 * t1.val) (2 * k.val)) 2 11 :=
      acc_step d L fl tab (wL L).val (2 * t1.val) (2 * k.val) 0 _ (hRA _) ⟨10, by decide⟩ ⟨2, by decide⟩ _ rfl _ hwA_10 _ (k1_off19_form ⟨0, by decide⟩ _ _) _ hc16
    have sA2_11 : addf (AccMath.accVec (rowF fl tab (wL L).val (2 * t1.val) (2 * k.val)) (offF fl (wL L).val (2 * t1.val) (2 * k.val)) 2 11) (shapeCast S16 (pair0_lt.sl.v2085 d L tab k r g1 g2 hR hin) hc16) = AccMath.accVec (rowF fl tab (wL L).val (2 * t1.val) (2 * k.val)) (offF fl (wL L).val (2 * t1.val) (2 * k.val)) 2 12 :=
      acc_step d L fl tab (wL L).val (2 * t1.val) (2 * k.val) 0 _ (hRA _) ⟨11, by decide⟩ ⟨2, by decide⟩ _ rfl _ hwA_11 _ (k1_off20_form ⟨0, by decide⟩ _ _) _ hc16
    have sA2_12 : addf (AccMath.accVec (rowF fl tab (wL L).val (2 * t1.val) (2 * k.val)) (offF fl (wL L).val (2 * t1.val) (2 * k.val)) 2 12) (shapeCast S16 (pair0_lt.sl.v2121 d L tab k r g1 g2 hR hin) hc16) = AccMath.accVec (rowF fl tab (wL L).val (2 * t1.val) (2 * k.val)) (offF fl (wL L).val (2 * t1.val) (2 * k.val)) 2 13 :=
      acc_step d L fl tab (wL L).val (2 * t1.val) (2 * k.val) 0 _ (hRA _) ⟨12, by decide⟩ ⟨2, by decide⟩ _ rfl _ hwA_12 _ (k1_off21_form ⟨0, by decide⟩ _ _) _ hc16
    have sA2_13 : addf (AccMath.accVec (rowF fl tab (wL L).val (2 * t1.val) (2 * k.val)) (offF fl (wL L).val (2 * t1.val) (2 * k.val)) 2 13) (shapeCast S16 (pair0_lt.sl.v2157 d L tab k r g1 g2 hR hin) hc16) = AccMath.accVec (rowF fl tab (wL L).val (2 * t1.val) (2 * k.val)) (offF fl (wL L).val (2 * t1.val) (2 * k.val)) 2 14 :=
      acc_step d L fl tab (wL L).val (2 * t1.val) (2 * k.val) 0 _ (hRA _) ⟨13, by decide⟩ ⟨2, by decide⟩ _ rfl _ hwA_13 _ (k1_off22_form ⟨0, by decide⟩ _ _) _ hc16
    have sA2_14 : addf (AccMath.accVec (rowF fl tab (wL L).val (2 * t1.val) (2 * k.val)) (offF fl (wL L).val (2 * t1.val) (2 * k.val)) 2 14) (shapeCast S16 (pair0_lt.sl.v2193 d L tab k r g1 g2 hR hin) hc16) = AccMath.accVec (rowF fl tab (wL L).val (2 * t1.val) (2 * k.val)) (offF fl (wL L).val (2 * t1.val) (2 * k.val)) 2 15 :=
      acc_step d L fl tab (wL L).val (2 * t1.val) (2 * k.val) 0 _ (hRA _) ⟨14, by decide⟩ ⟨2, by decide⟩ _ rfl _ hwA_14 _ (k1_off23_form ⟨0, by decide⟩ _ _) _ hc16
    have sA2_15 : addf (AccMath.accVec (rowF fl tab (wL L).val (2 * t1.val) (2 * k.val)) (offF fl (wL L).val (2 * t1.val) (2 * k.val)) 2 15) (shapeCast S16 (pair0_lt.sl.v2229 d L tab k r g1 g2 hR hin) hc16) = AccMath.accVec (rowF fl tab (wL L).val (2 * t1.val) (2 * k.val)) (offF fl (wL L).val (2 * t1.val) (2 * k.val)) 2 16 :=
      acc_step d L fl tab (wL L).val (2 * t1.val) (2 * k.val) 0 _ (hRA _) ⟨15, by decide⟩ ⟨2, by decide⟩ _ rfl _ hwA_15 _ (k1_off24_form ⟨0, by decide⟩ _ _) _ hc16
    have sA2_16 : addf (AccMath.accVec (rowF fl tab (wL L).val (2 * t1.val) (2 * k.val)) (offF fl (wL L).val (2 * t1.val) (2 * k.val)) 2 16) (shapeCast S16 (pair0_lt.sl.v1689_1 d L tab k r g1 g2 hR hin) hc16) = AccMath.accVec (rowF fl tab (wL L).val (2 * t1.val) (2 * k.val)) (offF fl (wL L).val (2 * t1.val) (2 * k.val)) 2 17 :=
      acc_step d L fl tab (wL L).val (2 * t1.val) (2 * k.val) 0 _ (hRA _) ⟨16, by decide⟩ ⟨2, by decide⟩ _ rfl _ hwA_16 _ (k1_off9_form ⟨1, by decide⟩ _ _) _ hc16
    have sA2_17 : addf (AccMath.accVec (rowF fl tab (wL L).val (2 * t1.val) (2 * k.val)) (offF fl (wL L).val (2 * t1.val) (2 * k.val)) 2 17) (shapeCast S16 (pair0_lt.sl.v1725_1 d L tab k r g1 g2 hR hin) hc16) = AccMath.accVec (rowF fl tab (wL L).val (2 * t1.val) (2 * k.val)) (offF fl (wL L).val (2 * t1.val) (2 * k.val)) 2 18 :=
      acc_step d L fl tab (wL L).val (2 * t1.val) (2 * k.val) 0 _ (hRA _) ⟨17, by decide⟩ ⟨2, by decide⟩ _ rfl _ hwA_17 _ (k1_off10_form ⟨1, by decide⟩ _ _) _ hc16
    have sA2_18 : addf (AccMath.accVec (rowF fl tab (wL L).val (2 * t1.val) (2 * k.val)) (offF fl (wL L).val (2 * t1.val) (2 * k.val)) 2 18) (shapeCast S16 (pair0_lt.sl.v1761_1 d L tab k r g1 g2 hR hin) hc16) = AccMath.accVec (rowF fl tab (wL L).val (2 * t1.val) (2 * k.val)) (offF fl (wL L).val (2 * t1.val) (2 * k.val)) 2 19 :=
      acc_step d L fl tab (wL L).val (2 * t1.val) (2 * k.val) 0 _ (hRA _) ⟨18, by decide⟩ ⟨2, by decide⟩ _ rfl _ hwA_18 _ (k1_off11_form ⟨1, by decide⟩ _ _) _ hc16
    have sA2_19 : addf (AccMath.accVec (rowF fl tab (wL L).val (2 * t1.val) (2 * k.val)) (offF fl (wL L).val (2 * t1.val) (2 * k.val)) 2 19) (shapeCast S16 (pair0_lt.sl.v1797_1 d L tab k r g1 g2 hR hin) hc16) = AccMath.accVec (rowF fl tab (wL L).val (2 * t1.val) (2 * k.val)) (offF fl (wL L).val (2 * t1.val) (2 * k.val)) 2 20 :=
      acc_step d L fl tab (wL L).val (2 * t1.val) (2 * k.val) 0 _ (hRA _) ⟨19, by decide⟩ ⟨2, by decide⟩ _ rfl _ hwA_19 _ (k1_off12_form ⟨1, by decide⟩ _ _) _ hc16
    have sA2_20 : addf (AccMath.accVec (rowF fl tab (wL L).val (2 * t1.val) (2 * k.val)) (offF fl (wL L).val (2 * t1.val) (2 * k.val)) 2 20) (shapeCast S16 (pair0_lt.sl.v1833_1 d L tab k r g1 g2 hR hin) hc16) = AccMath.accVec (rowF fl tab (wL L).val (2 * t1.val) (2 * k.val)) (offF fl (wL L).val (2 * t1.val) (2 * k.val)) 2 21 :=
      acc_step d L fl tab (wL L).val (2 * t1.val) (2 * k.val) 0 _ (hRA _) ⟨20, by decide⟩ ⟨2, by decide⟩ _ rfl _ hwA_20 _ (k1_off13_form ⟨1, by decide⟩ _ _) _ hc16
    have sA2_21 : addf (AccMath.accVec (rowF fl tab (wL L).val (2 * t1.val) (2 * k.val)) (offF fl (wL L).val (2 * t1.val) (2 * k.val)) 2 21) (shapeCast S16 (pair0_lt.sl.v1869_1 d L tab k r g1 g2 hR hin) hc16) = AccMath.accVec (rowF fl tab (wL L).val (2 * t1.val) (2 * k.val)) (offF fl (wL L).val (2 * t1.val) (2 * k.val)) 2 22 :=
      acc_step d L fl tab (wL L).val (2 * t1.val) (2 * k.val) 0 _ (hRA _) ⟨21, by decide⟩ ⟨2, by decide⟩ _ rfl _ hwA_21 _ (k1_off14_form ⟨1, by decide⟩ _ _) _ hc16
    have sA2_22 : addf (AccMath.accVec (rowF fl tab (wL L).val (2 * t1.val) (2 * k.val)) (offF fl (wL L).val (2 * t1.val) (2 * k.val)) 2 22) (shapeCast S16 (pair0_lt.sl.v1905_1 d L tab k r g1 g2 hR hin) hc16) = AccMath.accVec (rowF fl tab (wL L).val (2 * t1.val) (2 * k.val)) (offF fl (wL L).val (2 * t1.val) (2 * k.val)) 2 23 :=
      acc_step d L fl tab (wL L).val (2 * t1.val) (2 * k.val) 0 _ (hRA _) ⟨22, by decide⟩ ⟨2, by decide⟩ _ rfl _ hwA_22 _ (k1_off15_form ⟨1, by decide⟩ _ _) _ hc16
    have sA2_23 : addf (AccMath.accVec (rowF fl tab (wL L).val (2 * t1.val) (2 * k.val)) (offF fl (wL L).val (2 * t1.val) (2 * k.val)) 2 23) (shapeCast S16 (pair0_lt.sl.v1941_1 d L tab k r g1 g2 hR hin) hc16) = AccMath.accVec (rowF fl tab (wL L).val (2 * t1.val) (2 * k.val)) (offF fl (wL L).val (2 * t1.val) (2 * k.val)) 2 24 :=
      acc_step d L fl tab (wL L).val (2 * t1.val) (2 * k.val) 0 _ (hRA _) ⟨23, by decide⟩ ⟨2, by decide⟩ _ rfl _ hwA_23 _ (k1_off16_form ⟨1, by decide⟩ _ _) _ hc16
    have sA2_24 : addf (AccMath.accVec (rowF fl tab (wL L).val (2 * t1.val) (2 * k.val)) (offF fl (wL L).val (2 * t1.val) (2 * k.val)) 2 24) (shapeCast S16 (pair0_lt.sl.v1977_1 d L tab k r g1 g2 hR hin) hc16) = AccMath.accVec (rowF fl tab (wL L).val (2 * t1.val) (2 * k.val)) (offF fl (wL L).val (2 * t1.val) (2 * k.val)) 2 25 :=
      acc_step d L fl tab (wL L).val (2 * t1.val) (2 * k.val) 0 _ (hRA _) ⟨24, by decide⟩ ⟨2, by decide⟩ _ rfl _ hwA_24 _ (k1_off17_form ⟨1, by decide⟩ _ _) _ hc16
    have sA2_25 : addf (AccMath.accVec (rowF fl tab (wL L).val (2 * t1.val) (2 * k.val)) (offF fl (wL L).val (2 * t1.val) (2 * k.val)) 2 25) (shapeCast S16 (pair0_lt.sl.v2013_1 d L tab k r g1 g2 hR hin) hc16) = AccMath.accVec (rowF fl tab (wL L).val (2 * t1.val) (2 * k.val)) (offF fl (wL L).val (2 * t1.val) (2 * k.val)) 2 26 :=
      acc_step d L fl tab (wL L).val (2 * t1.val) (2 * k.val) 0 _ (hRA _) ⟨25, by decide⟩ ⟨2, by decide⟩ _ rfl _ hwA_25 _ (k1_off18_form ⟨1, by decide⟩ _ _) _ hc16
    have sA2_26 : addf (AccMath.accVec (rowF fl tab (wL L).val (2 * t1.val) (2 * k.val)) (offF fl (wL L).val (2 * t1.val) (2 * k.val)) 2 26) (shapeCast S16 (pair0_lt.sl.v2049_1 d L tab k r g1 g2 hR hin) hc16) = AccMath.accVec (rowF fl tab (wL L).val (2 * t1.val) (2 * k.val)) (offF fl (wL L).val (2 * t1.val) (2 * k.val)) 2 27 :=
      acc_step d L fl tab (wL L).val (2 * t1.val) (2 * k.val) 0 _ (hRA _) ⟨26, by decide⟩ ⟨2, by decide⟩ _ rfl _ hwA_26 _ (k1_off19_form ⟨1, by decide⟩ _ _) _ hc16
    have sA2_27 : addf (AccMath.accVec (rowF fl tab (wL L).val (2 * t1.val) (2 * k.val)) (offF fl (wL L).val (2 * t1.val) (2 * k.val)) 2 27) (shapeCast S16 (pair0_lt.sl.v2085_1 d L tab k r g1 g2 hR hin) hc16) = AccMath.accVec (rowF fl tab (wL L).val (2 * t1.val) (2 * k.val)) (offF fl (wL L).val (2 * t1.val) (2 * k.val)) 2 28 :=
      acc_step d L fl tab (wL L).val (2 * t1.val) (2 * k.val) 0 _ (hRA _) ⟨27, by decide⟩ ⟨2, by decide⟩ _ rfl _ hwA_27 _ (k1_off20_form ⟨1, by decide⟩ _ _) _ hc16
    have sA2_28 : addf (AccMath.accVec (rowF fl tab (wL L).val (2 * t1.val) (2 * k.val)) (offF fl (wL L).val (2 * t1.val) (2 * k.val)) 2 28) (shapeCast S16 (pair0_lt.sl.v2121_1 d L tab k r g1 g2 hR hin) hc16) = AccMath.accVec (rowF fl tab (wL L).val (2 * t1.val) (2 * k.val)) (offF fl (wL L).val (2 * t1.val) (2 * k.val)) 2 29 :=
      acc_step d L fl tab (wL L).val (2 * t1.val) (2 * k.val) 0 _ (hRA _) ⟨28, by decide⟩ ⟨2, by decide⟩ _ rfl _ hwA_28 _ (k1_off21_form ⟨1, by decide⟩ _ _) _ hc16
    have sA2_29 : addf (AccMath.accVec (rowF fl tab (wL L).val (2 * t1.val) (2 * k.val)) (offF fl (wL L).val (2 * t1.val) (2 * k.val)) 2 29) (shapeCast S16 (pair0_lt.sl.v2157_1 d L tab k r g1 g2 hR hin) hc16) = AccMath.accVec (rowF fl tab (wL L).val (2 * t1.val) (2 * k.val)) (offF fl (wL L).val (2 * t1.val) (2 * k.val)) 2 30 :=
      acc_step d L fl tab (wL L).val (2 * t1.val) (2 * k.val) 0 _ (hRA _) ⟨29, by decide⟩ ⟨2, by decide⟩ _ rfl _ hwA_29 _ (k1_off22_form ⟨1, by decide⟩ _ _) _ hc16
    have sA2_30 : addf (AccMath.accVec (rowF fl tab (wL L).val (2 * t1.val) (2 * k.val)) (offF fl (wL L).val (2 * t1.val) (2 * k.val)) 2 30) (shapeCast S16 (pair0_lt.sl.v2193_1 d L tab k r g1 g2 hR hin) hc16) = AccMath.accVec (rowF fl tab (wL L).val (2 * t1.val) (2 * k.val)) (offF fl (wL L).val (2 * t1.val) (2 * k.val)) 2 31 :=
      acc_step d L fl tab (wL L).val (2 * t1.val) (2 * k.val) 0 _ (hRA _) ⟨30, by decide⟩ ⟨2, by decide⟩ _ rfl _ hwA_30 _ (k1_off23_form ⟨1, by decide⟩ _ _) _ hc16
    have sA2_31 : addf (AccMath.accVec (rowF fl tab (wL L).val (2 * t1.val) (2 * k.val)) (offF fl (wL L).val (2 * t1.val) (2 * k.val)) 2 31) (shapeCast S16 (pair0_lt.sl.v2229_1 d L tab k r g1 g2 hR hin) hc16) = AccMath.accVec (rowF fl tab (wL L).val (2 * t1.val) (2 * k.val)) (offF fl (wL L).val (2 * t1.val) (2 * k.val)) 2 32 :=
      acc_step d L fl tab (wL L).val (2 * t1.val) (2 * k.val) 0 _ (hRA _) ⟨31, by decide⟩ ⟨2, by decide⟩ _ rfl _ hwA_31 _ (k1_off24_form ⟨1, by decide⟩ _ _) _ hc16
    have sA2_32 : addf (AccMath.accVec (rowF fl tab (wL L).val (2 * t1.val) (2 * k.val)) (offF fl (wL L).val (2 * t1.val) (2 * k.val)) 2 32) (shapeCast S16 (pair0_lt.sl.v1689_2 d L tab k r g1 g2 hR hin) hc16) = AccMath.accVec (rowF fl tab (wL L).val (2 * t1.val) (2 * k.val)) (offF fl (wL L).val (2 * t1.val) (2 * k.val)) 2 33 :=
      acc_step d L fl tab (wL L).val (2 * t1.val) (2 * k.val) 0 _ (hRA _) ⟨32, by decide⟩ ⟨2, by decide⟩ _ rfl _ hwA_32 _ (k1_off9_form ⟨2, by decide⟩ _ _) _ hc16
    have sA2_33 : addf (AccMath.accVec (rowF fl tab (wL L).val (2 * t1.val) (2 * k.val)) (offF fl (wL L).val (2 * t1.val) (2 * k.val)) 2 33) (shapeCast S16 (pair0_lt.sl.v1725_2 d L tab k r g1 g2 hR hin) hc16) = AccMath.accVec (rowF fl tab (wL L).val (2 * t1.val) (2 * k.val)) (offF fl (wL L).val (2 * t1.val) (2 * k.val)) 2 34 :=
      acc_step d L fl tab (wL L).val (2 * t1.val) (2 * k.val) 0 _ (hRA _) ⟨33, by decide⟩ ⟨2, by decide⟩ _ rfl _ hwA_33 _ (k1_off10_form ⟨2, by decide⟩ _ _) _ hc16
    have sA2_34 : addf (AccMath.accVec (rowF fl tab (wL L).val (2 * t1.val) (2 * k.val)) (offF fl (wL L).val (2 * t1.val) (2 * k.val)) 2 34) (shapeCast S16 (pair0_lt.sl.v1761_2 d L tab k r g1 g2 hR hin) hc16) = AccMath.accVec (rowF fl tab (wL L).val (2 * t1.val) (2 * k.val)) (offF fl (wL L).val (2 * t1.val) (2 * k.val)) 2 35 :=
      acc_step d L fl tab (wL L).val (2 * t1.val) (2 * k.val) 0 _ (hRA _) ⟨34, by decide⟩ ⟨2, by decide⟩ _ rfl _ hwA_34 _ (k1_off11_form ⟨2, by decide⟩ _ _) _ hc16
    have sA2_35 : addf (AccMath.accVec (rowF fl tab (wL L).val (2 * t1.val) (2 * k.val)) (offF fl (wL L).val (2 * t1.val) (2 * k.val)) 2 35) (shapeCast S16 (pair0_lt.sl.v1797_2 d L tab k r g1 g2 hR hin) hc16) = AccMath.accVec (rowF fl tab (wL L).val (2 * t1.val) (2 * k.val)) (offF fl (wL L).val (2 * t1.val) (2 * k.val)) 2 36 :=
      acc_step d L fl tab (wL L).val (2 * t1.val) (2 * k.val) 0 _ (hRA _) ⟨35, by decide⟩ ⟨2, by decide⟩ _ rfl _ hwA_35 _ (k1_off12_form ⟨2, by decide⟩ _ _) _ hc16
    have sA2_36 : addf (AccMath.accVec (rowF fl tab (wL L).val (2 * t1.val) (2 * k.val)) (offF fl (wL L).val (2 * t1.val) (2 * k.val)) 2 36) (shapeCast S16 (pair0_lt.sl.v1833_2 d L tab k r g1 g2 hR hin) hc16) = AccMath.accVec (rowF fl tab (wL L).val (2 * t1.val) (2 * k.val)) (offF fl (wL L).val (2 * t1.val) (2 * k.val)) 2 37 :=
      acc_step d L fl tab (wL L).val (2 * t1.val) (2 * k.val) 0 _ (hRA _) ⟨36, by decide⟩ ⟨2, by decide⟩ _ rfl _ hwA_36 _ (k1_off13_form ⟨2, by decide⟩ _ _) _ hc16
    have sA2_37 : addf (AccMath.accVec (rowF fl tab (wL L).val (2 * t1.val) (2 * k.val)) (offF fl (wL L).val (2 * t1.val) (2 * k.val)) 2 37) (shapeCast S16 (pair0_lt.sl.v1869_2 d L tab k r g1 g2 hR hin) hc16) = AccMath.accVec (rowF fl tab (wL L).val (2 * t1.val) (2 * k.val)) (offF fl (wL L).val (2 * t1.val) (2 * k.val)) 2 38 :=
      acc_step d L fl tab (wL L).val (2 * t1.val) (2 * k.val) 0 _ (hRA _) ⟨37, by decide⟩ ⟨2, by decide⟩ _ rfl _ hwA_37 _ (k1_off14_form ⟨2, by decide⟩ _ _) _ hc16
    have sA2_38 : addf (AccMath.accVec (rowF fl tab (wL L).val (2 * t1.val) (2 * k.val)) (offF fl (wL L).val (2 * t1.val) (2 * k.val)) 2 38) (shapeCast S16 (pair0_lt.sl.v1905_2 d L tab k r g1 g2 hR hin) hc16) = AccMath.accVec (rowF fl tab (wL L).val (2 * t1.val) (2 * k.val)) (offF fl (wL L).val (2 * t1.val) (2 * k.val)) 2 39 :=
      acc_step d L fl tab (wL L).val (2 * t1.val) (2 * k.val) 0 _ (hRA _) ⟨38, by decide⟩ ⟨2, by decide⟩ _ rfl _ hwA_38 _ (k1_off15_form ⟨2, by decide⟩ _ _) _ hc16
    have sA2_39 : addf (AccMath.accVec (rowF fl tab (wL L).val (2 * t1.val) (2 * k.val)) (offF fl (wL L).val (2 * t1.val) (2 * k.val)) 2 39) (shapeCast S16 (pair0_lt.sl.v1941_2 d L tab k r g1 g2 hR hin) hc16) = AccMath.accVec (rowF fl tab (wL L).val (2 * t1.val) (2 * k.val)) (offF fl (wL L).val (2 * t1.val) (2 * k.val)) 2 40 :=
      acc_step d L fl tab (wL L).val (2 * t1.val) (2 * k.val) 0 _ (hRA _) ⟨39, by decide⟩ ⟨2, by decide⟩ _ rfl _ hwA_39 _ (k1_off16_form ⟨2, by decide⟩ _ _) _ hc16
    have sA2_40 : addf (AccMath.accVec (rowF fl tab (wL L).val (2 * t1.val) (2 * k.val)) (offF fl (wL L).val (2 * t1.val) (2 * k.val)) 2 40) (shapeCast S16 (pair0_lt.sl.v1977_2 d L tab k r g1 g2 hR hin) hc16) = AccMath.accVec (rowF fl tab (wL L).val (2 * t1.val) (2 * k.val)) (offF fl (wL L).val (2 * t1.val) (2 * k.val)) 2 41 :=
      acc_step d L fl tab (wL L).val (2 * t1.val) (2 * k.val) 0 _ (hRA _) ⟨40, by decide⟩ ⟨2, by decide⟩ _ rfl _ hwA_40 _ (k1_off17_form ⟨2, by decide⟩ _ _) _ hc16
    have sA2_41 : addf (AccMath.accVec (rowF fl tab (wL L).val (2 * t1.val) (2 * k.val)) (offF fl (wL L).val (2 * t1.val) (2 * k.val)) 2 41) (shapeCast S16 (pair0_lt.sl.v2013_2 d L tab k r g1 g2 hR hin) hc16) = AccMath.accVec (rowF fl tab (wL L).val (2 * t1.val) (2 * k.val)) (offF fl (wL L).val (2 * t1.val) (2 * k.val)) 2 42 :=
      acc_step d L fl tab (wL L).val (2 * t1.val) (2 * k.val) 0 _ (hRA _) ⟨41, by decide⟩ ⟨2, by decide⟩ _ rfl _ hwA_41 _ (k1_off18_form ⟨2, by decide⟩ _ _) _ hc16
    have sA2_42 : addf (AccMath.accVec (rowF fl tab (wL L).val (2 * t1.val) (2 * k.val)) (offF fl (wL L).val (2 * t1.val) (2 * k.val)) 2 42) (shapeCast S16 (pair0_lt.sl.v2049_2 d L tab k r g1 g2 hR hin) hc16) = AccMath.accVec (rowF fl tab (wL L).val (2 * t1.val) (2 * k.val)) (offF fl (wL L).val (2 * t1.val) (2 * k.val)) 2 43 :=
      acc_step d L fl tab (wL L).val (2 * t1.val) (2 * k.val) 0 _ (hRA _) ⟨42, by decide⟩ ⟨2, by decide⟩ _ rfl _ hwA_42 _ (k1_off19_form ⟨2, by decide⟩ _ _) _ hc16
    have sA2_43 : addf (AccMath.accVec (rowF fl tab (wL L).val (2 * t1.val) (2 * k.val)) (offF fl (wL L).val (2 * t1.val) (2 * k.val)) 2 43) (shapeCast S16 (pair0_lt.sl.v2085_2 d L tab k r g1 g2 hR hin) hc16) = AccMath.accVec (rowF fl tab (wL L).val (2 * t1.val) (2 * k.val)) (offF fl (wL L).val (2 * t1.val) (2 * k.val)) 2 44 :=
      acc_step d L fl tab (wL L).val (2 * t1.val) (2 * k.val) 0 _ (hRA _) ⟨43, by decide⟩ ⟨2, by decide⟩ _ rfl _ hwA_43 _ (k1_off20_form ⟨2, by decide⟩ _ _) _ hc16
    have sA2_44 : addf (AccMath.accVec (rowF fl tab (wL L).val (2 * t1.val) (2 * k.val)) (offF fl (wL L).val (2 * t1.val) (2 * k.val)) 2 44) (shapeCast S16 (pair0_lt.sl.v2121_2 d L tab k r g1 g2 hR hin) hc16) = AccMath.accVec (rowF fl tab (wL L).val (2 * t1.val) (2 * k.val)) (offF fl (wL L).val (2 * t1.val) (2 * k.val)) 2 45 :=
      acc_step d L fl tab (wL L).val (2 * t1.val) (2 * k.val) 0 _ (hRA _) ⟨44, by decide⟩ ⟨2, by decide⟩ _ rfl _ hwA_44 _ (k1_off21_form ⟨2, by decide⟩ _ _) _ hc16
    have sA2_45 : addf (AccMath.accVec (rowF fl tab (wL L).val (2 * t1.val) (2 * k.val)) (offF fl (wL L).val (2 * t1.val) (2 * k.val)) 2 45) (shapeCast S16 (pair0_lt.sl.v2157_2 d L tab k r g1 g2 hR hin) hc16) = AccMath.accVec (rowF fl tab (wL L).val (2 * t1.val) (2 * k.val)) (offF fl (wL L).val (2 * t1.val) (2 * k.val)) 2 46 :=
      acc_step d L fl tab (wL L).val (2 * t1.val) (2 * k.val) 0 _ (hRA _) ⟨45, by decide⟩ ⟨2, by decide⟩ _ rfl _ hwA_45 _ (k1_off22_form ⟨2, by decide⟩ _ _) _ hc16
    have sA2_46 : addf (AccMath.accVec (rowF fl tab (wL L).val (2 * t1.val) (2 * k.val)) (offF fl (wL L).val (2 * t1.val) (2 * k.val)) 2 46) (shapeCast S16 (pair0_lt.sl.v2193_2 d L tab k r g1 g2 hR hin) hc16) = AccMath.accVec (rowF fl tab (wL L).val (2 * t1.val) (2 * k.val)) (offF fl (wL L).val (2 * t1.val) (2 * k.val)) 2 47 :=
      acc_step d L fl tab (wL L).val (2 * t1.val) (2 * k.val) 0 _ (hRA _) ⟨46, by decide⟩ ⟨2, by decide⟩ _ rfl _ hwA_46 _ (k1_off23_form ⟨2, by decide⟩ _ _) _ hc16
    have sA2_47 : addf (AccMath.accVec (rowF fl tab (wL L).val (2 * t1.val) (2 * k.val)) (offF fl (wL L).val (2 * t1.val) (2 * k.val)) 2 47) (shapeCast S16 (pair0_lt.sl.v2229_2 d L tab k r g1 g2 hR hin) hc16) = AccMath.accVec (rowF fl tab (wL L).val (2 * t1.val) (2 * k.val)) (offF fl (wL L).val (2 * t1.val) (2 * k.val)) 2 48 :=
      acc_step d L fl tab (wL L).val (2 * t1.val) (2 * k.val) 0 _ (hRA _) ⟨47, by decide⟩ ⟨2, by decide⟩ _ rfl _ hwA_47 _ (k1_off24_form ⟨2, by decide⟩ _ _) _ hc16
    have sA2_48 : addf (AccMath.accVec (rowF fl tab (wL L).val (2 * t1.val) (2 * k.val)) (offF fl (wL L).val (2 * t1.val) (2 * k.val)) 2 48) (shapeCast S16 (pair0_lt.sl.v1478 d L tab k r g1 g2 hR hin) hc16) = AccMath.accVec (rowF fl tab (wL L).val (2 * t1.val) (2 * k.val)) (offF fl (wL L).val (2 * t1.val) (2 * k.val)) 2 49 :=
      acc_step d L fl tab (wL L).val (2 * t1.val) (2 * k.val) 0 _ (hRA _) ⟨48, by decide⟩ ⟨2, by decide⟩ _ rfl _ hwA_48 _ (k1_off26_form _ _) _ hc16
    have sA2_49 : addf (AccMath.accVec (rowF fl tab (wL L).val (2 * t1.val) (2 * k.val)) (offF fl (wL L).val (2 * t1.val) (2 * k.val)) 2 49) (shapeCast S16 (pair0_lt.sl.v1512 d L tab k r g1 g2 hR hin) hc16) = AccMath.accVec (rowF fl tab (wL L).val (2 * t1.val) (2 * k.val)) (offF fl (wL L).val (2 * t1.val) (2 * k.val)) 2 50 :=
      acc_step d L fl tab (wL L).val (2 * t1.val) (2 * k.val) 0 _ (hRA _) ⟨49, by decide⟩ ⟨2, by decide⟩ _ rfl _ hwA_49 _ (k1_off27_form _ _) _ hc16
    have hPA2 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val)) (offF fl (wL L).val (2 * t1.val) (2 * k.val)) 2 0) (shapeCast S16 (pair0_lt.sl.v1689 d L tab k r g1 g2 hR hin) hc16)) (shapeCast S16 (pair0_lt.sl.v1725 d L tab k r g1 g2 hR hin) hc16)) (shapeCast S16 (pair0_lt.sl.v1761 d L tab k r g1 g2 hR hin) hc16)) (shapeCast S16 (pair0_lt.sl.v1797 d L tab k r g1 g2 hR hin) hc16)) (shapeCast S16 (pair0_lt.sl.v1833 d L tab k r g1 g2 hR hin) hc16)) (shapeCast S16 (pair0_lt.sl.v1869 d L tab k r g1 g2 hR hin) hc16)) (shapeCast S16 (pair0_lt.sl.v1905 d L tab k r g1 g2 hR hin) hc16)) (shapeCast S16 (pair0_lt.sl.v1941 d L tab k r g1 g2 hR hin) hc16)) (shapeCast S16 (pair0_lt.sl.v1977 d L tab k r g1 g2 hR hin) hc16)) (shapeCast S16 (pair0_lt.sl.v2013 d L tab k r g1 g2 hR hin) hc16)) (shapeCast S16 (pair0_lt.sl.v2049 d L tab k r g1 g2 hR hin) hc16)) (shapeCast S16 (pair0_lt.sl.v2085 d L tab k r g1 g2 hR hin) hc16)) (shapeCast S16 (pair0_lt.sl.v2121 d L tab k r g1 g2 hR hin) hc16)) (shapeCast S16 (pair0_lt.sl.v2157 d L tab k r g1 g2 hR hin) hc16)) (shapeCast S16 (pair0_lt.sl.v2193 d L tab k r g1 g2 hR hin) hc16)) (shapeCast S16 (pair0_lt.sl.v2229 d L tab k r g1 g2 hR hin) hc16)) (shapeCast S16 (pair0_lt.sl.v1689_1 d L tab k r g1 g2 hR hin) hc16)) (shapeCast S16 (pair0_lt.sl.v1725_1 d L tab k r g1 g2 hR hin) hc16)) (shapeCast S16 (pair0_lt.sl.v1761_1 d L tab k r g1 g2 hR hin) hc16)) (shapeCast S16 (pair0_lt.sl.v1797_1 d L tab k r g1 g2 hR hin) hc16)) (shapeCast S16 (pair0_lt.sl.v1833_1 d L tab k r g1 g2 hR hin) hc16)) (shapeCast S16 (pair0_lt.sl.v1869_1 d L tab k r g1 g2 hR hin) hc16)) (shapeCast S16 (pair0_lt.sl.v1905_1 d L tab k r g1 g2 hR hin) hc16)) (shapeCast S16 (pair0_lt.sl.v1941_1 d L tab k r g1 g2 hR hin) hc16)) (shapeCast S16 (pair0_lt.sl.v1977_1 d L tab k r g1 g2 hR hin) hc16)) (shapeCast S16 (pair0_lt.sl.v2013_1 d L tab k r g1 g2 hR hin) hc16)) (shapeCast S16 (pair0_lt.sl.v2049_1 d L tab k r g1 g2 hR hin) hc16)) (shapeCast S16 (pair0_lt.sl.v2085_1 d L tab k r g1 g2 hR hin) hc16)) (shapeCast S16 (pair0_lt.sl.v2121_1 d L tab k r g1 g2 hR hin) hc16)) (shapeCast S16 (pair0_lt.sl.v2157_1 d L tab k r g1 g2 hR hin) hc16)) (shapeCast S16 (pair0_lt.sl.v2193_1 d L tab k r g1 g2 hR hin) hc16)) (shapeCast S16 (pair0_lt.sl.v2229_1 d L tab k r g1 g2 hR hin) hc16)) (shapeCast S16 (pair0_lt.sl.v1689_2 d L tab k r g1 g2 hR hin) hc16)) (shapeCast S16 (pair0_lt.sl.v1725_2 d L tab k r g1 g2 hR hin) hc16)) (shapeCast S16 (pair0_lt.sl.v1761_2 d L tab k r g1 g2 hR hin) hc16)) (shapeCast S16 (pair0_lt.sl.v1797_2 d L tab k r g1 g2 hR hin) hc16)) (shapeCast S16 (pair0_lt.sl.v1833_2 d L tab k r g1 g2 hR hin) hc16)) (shapeCast S16 (pair0_lt.sl.v1869_2 d L tab k r g1 g2 hR hin) hc16)) (shapeCast S16 (pair0_lt.sl.v1905_2 d L tab k r g1 g2 hR hin) hc16)) (shapeCast S16 (pair0_lt.sl.v1941_2 d L tab k r g1 g2 hR hin) hc16)) (shapeCast S16 (pair0_lt.sl.v1977_2 d L tab k r g1 g2 hR hin) hc16)) (shapeCast S16 (pair0_lt.sl.v2013_2 d L tab k r g1 g2 hR hin) hc16)) (shapeCast S16 (pair0_lt.sl.v2049_2 d L tab k r g1 g2 hR hin) hc16)) (shapeCast S16 (pair0_lt.sl.v2085_2 d L tab k r g1 g2 hR hin) hc16)) (shapeCast S16 (pair0_lt.sl.v2121_2 d L tab k r g1 g2 hR hin) hc16)) (shapeCast S16 (pair0_lt.sl.v2157_2 d L tab k r g1 g2 hR hin) hc16)) (shapeCast S16 (pair0_lt.sl.v2193_2 d L tab k r g1 g2 hR hin) hc16)) (shapeCast S16 (pair0_lt.sl.v2229_2 d L tab k r g1 g2 hR hin) hc16)) (shapeCast S16 (pair0_lt.sl.v1478 d L tab k r g1 g2 hR hin) hc16)) (shapeCast S16 (pair0_lt.sl.v1512 d L tab k r g1 g2 hR hin) hc16)) hc1 x = Spec.bagPartial fl tab (128 * (wL L).val + 16 * (2 * t1.val) + (2 * k.val)) (16 * 2 + (x 2).val) 50 := fun x => by
      rw [sA2_0, sA2_1, sA2_2, sA2_3, sA2_4, sA2_5, sA2_6, sA2_7, sA2_8, sA2_9, sA2_10, sA2_11, sA2_12, sA2_13, sA2_14, sA2_15, sA2_16, sA2_17, sA2_18, sA2_19, sA2_20, sA2_21, sA2_22, sA2_23, sA2_24, sA2_25, sA2_26, sA2_27, sA2_28, sA2_29, sA2_30, sA2_31, sA2_32, sA2_33, sA2_34, sA2_35, sA2_36, sA2_37, sA2_38, sA2_39, sA2_40, sA2_41, sA2_42, sA2_43, sA2_44, sA2_45, sA2_46, sA2_47, sA2_48, sA2_49]; exact payload_ok fl tab (wL L).val (2 * t1.val) (2 * k.val) ⟨2, by decide⟩ hc1 x
    have sA3_0 : addf (AccMath.accVec (rowF fl tab (wL L).val (2 * t1.val) (2 * k.val)) (offF fl (wL L).val (2 * t1.val) (2 * k.val)) 3 0) (shapeCast S16 (pair0_lt.sl.v1697 d L tab k r g1 g2 hR hin) hc16) = AccMath.accVec (rowF fl tab (wL L).val (2 * t1.val) (2 * k.val)) (offF fl (wL L).val (2 * t1.val) (2 * k.val)) 3 1 :=
      acc_step d L fl tab (wL L).val (2 * t1.val) (2 * k.val) 0 _ (hRA _) ⟨0, by decide⟩ ⟨3, by decide⟩ _ rfl _ hwA_0 _ (k1_off9_form ⟨0, by decide⟩ _ _) _ hc16
    have sA3_1 : addf (AccMath.accVec (rowF fl tab (wL L).val (2 * t1.val) (2 * k.val)) (offF fl (wL L).val (2 * t1.val) (2 * k.val)) 3 1) (shapeCast S16 (pair0_lt.sl.v1733 d L tab k r g1 g2 hR hin) hc16) = AccMath.accVec (rowF fl tab (wL L).val (2 * t1.val) (2 * k.val)) (offF fl (wL L).val (2 * t1.val) (2 * k.val)) 3 2 :=
      acc_step d L fl tab (wL L).val (2 * t1.val) (2 * k.val) 0 _ (hRA _) ⟨1, by decide⟩ ⟨3, by decide⟩ _ rfl _ hwA_1 _ (k1_off10_form ⟨0, by decide⟩ _ _) _ hc16
    have sA3_2 : addf (AccMath.accVec (rowF fl tab (wL L).val (2 * t1.val) (2 * k.val)) (offF fl (wL L).val (2 * t1.val) (2 * k.val)) 3 2) (shapeCast S16 (pair0_lt.sl.v1769 d L tab k r g1 g2 hR hin) hc16) = AccMath.accVec (rowF fl tab (wL L).val (2 * t1.val) (2 * k.val)) (offF fl (wL L).val (2 * t1.val) (2 * k.val)) 3 3 :=
      acc_step d L fl tab (wL L).val (2 * t1.val) (2 * k.val) 0 _ (hRA _) ⟨2, by decide⟩ ⟨3, by decide⟩ _ rfl _ hwA_2 _ (k1_off11_form ⟨0, by decide⟩ _ _) _ hc16
    have sA3_3 : addf (AccMath.accVec (rowF fl tab (wL L).val (2 * t1.val) (2 * k.val)) (offF fl (wL L).val (2 * t1.val) (2 * k.val)) 3 3) (shapeCast S16 (pair0_lt.sl.v1805 d L tab k r g1 g2 hR hin) hc16) = AccMath.accVec (rowF fl tab (wL L).val (2 * t1.val) (2 * k.val)) (offF fl (wL L).val (2 * t1.val) (2 * k.val)) 3 4 :=
      acc_step d L fl tab (wL L).val (2 * t1.val) (2 * k.val) 0 _ (hRA _) ⟨3, by decide⟩ ⟨3, by decide⟩ _ rfl _ hwA_3 _ (k1_off12_form ⟨0, by decide⟩ _ _) _ hc16
    have sA3_4 : addf (AccMath.accVec (rowF fl tab (wL L).val (2 * t1.val) (2 * k.val)) (offF fl (wL L).val (2 * t1.val) (2 * k.val)) 3 4) (shapeCast S16 (pair0_lt.sl.v1841 d L tab k r g1 g2 hR hin) hc16) = AccMath.accVec (rowF fl tab (wL L).val (2 * t1.val) (2 * k.val)) (offF fl (wL L).val (2 * t1.val) (2 * k.val)) 3 5 :=
      acc_step d L fl tab (wL L).val (2 * t1.val) (2 * k.val) 0 _ (hRA _) ⟨4, by decide⟩ ⟨3, by decide⟩ _ rfl _ hwA_4 _ (k1_off13_form ⟨0, by decide⟩ _ _) _ hc16
    have sA3_5 : addf (AccMath.accVec (rowF fl tab (wL L).val (2 * t1.val) (2 * k.val)) (offF fl (wL L).val (2 * t1.val) (2 * k.val)) 3 5) (shapeCast S16 (pair0_lt.sl.v1877 d L tab k r g1 g2 hR hin) hc16) = AccMath.accVec (rowF fl tab (wL L).val (2 * t1.val) (2 * k.val)) (offF fl (wL L).val (2 * t1.val) (2 * k.val)) 3 6 :=
      acc_step d L fl tab (wL L).val (2 * t1.val) (2 * k.val) 0 _ (hRA _) ⟨5, by decide⟩ ⟨3, by decide⟩ _ rfl _ hwA_5 _ (k1_off14_form ⟨0, by decide⟩ _ _) _ hc16
    have sA3_6 : addf (AccMath.accVec (rowF fl tab (wL L).val (2 * t1.val) (2 * k.val)) (offF fl (wL L).val (2 * t1.val) (2 * k.val)) 3 6) (shapeCast S16 (pair0_lt.sl.v1913 d L tab k r g1 g2 hR hin) hc16) = AccMath.accVec (rowF fl tab (wL L).val (2 * t1.val) (2 * k.val)) (offF fl (wL L).val (2 * t1.val) (2 * k.val)) 3 7 :=
      acc_step d L fl tab (wL L).val (2 * t1.val) (2 * k.val) 0 _ (hRA _) ⟨6, by decide⟩ ⟨3, by decide⟩ _ rfl _ hwA_6 _ (k1_off15_form ⟨0, by decide⟩ _ _) _ hc16
    have sA3_7 : addf (AccMath.accVec (rowF fl tab (wL L).val (2 * t1.val) (2 * k.val)) (offF fl (wL L).val (2 * t1.val) (2 * k.val)) 3 7) (shapeCast S16 (pair0_lt.sl.v1949 d L tab k r g1 g2 hR hin) hc16) = AccMath.accVec (rowF fl tab (wL L).val (2 * t1.val) (2 * k.val)) (offF fl (wL L).val (2 * t1.val) (2 * k.val)) 3 8 :=
      acc_step d L fl tab (wL L).val (2 * t1.val) (2 * k.val) 0 _ (hRA _) ⟨7, by decide⟩ ⟨3, by decide⟩ _ rfl _ hwA_7 _ (k1_off16_form ⟨0, by decide⟩ _ _) _ hc16
    have sA3_8 : addf (AccMath.accVec (rowF fl tab (wL L).val (2 * t1.val) (2 * k.val)) (offF fl (wL L).val (2 * t1.val) (2 * k.val)) 3 8) (shapeCast S16 (pair0_lt.sl.v1985 d L tab k r g1 g2 hR hin) hc16) = AccMath.accVec (rowF fl tab (wL L).val (2 * t1.val) (2 * k.val)) (offF fl (wL L).val (2 * t1.val) (2 * k.val)) 3 9 :=
      acc_step d L fl tab (wL L).val (2 * t1.val) (2 * k.val) 0 _ (hRA _) ⟨8, by decide⟩ ⟨3, by decide⟩ _ rfl _ hwA_8 _ (k1_off17_form ⟨0, by decide⟩ _ _) _ hc16
    have sA3_9 : addf (AccMath.accVec (rowF fl tab (wL L).val (2 * t1.val) (2 * k.val)) (offF fl (wL L).val (2 * t1.val) (2 * k.val)) 3 9) (shapeCast S16 (pair0_lt.sl.v2021 d L tab k r g1 g2 hR hin) hc16) = AccMath.accVec (rowF fl tab (wL L).val (2 * t1.val) (2 * k.val)) (offF fl (wL L).val (2 * t1.val) (2 * k.val)) 3 10 :=
      acc_step d L fl tab (wL L).val (2 * t1.val) (2 * k.val) 0 _ (hRA _) ⟨9, by decide⟩ ⟨3, by decide⟩ _ rfl _ hwA_9 _ (k1_off18_form ⟨0, by decide⟩ _ _) _ hc16
    have sA3_10 : addf (AccMath.accVec (rowF fl tab (wL L).val (2 * t1.val) (2 * k.val)) (offF fl (wL L).val (2 * t1.val) (2 * k.val)) 3 10) (shapeCast S16 (pair0_lt.sl.v2057 d L tab k r g1 g2 hR hin) hc16) = AccMath.accVec (rowF fl tab (wL L).val (2 * t1.val) (2 * k.val)) (offF fl (wL L).val (2 * t1.val) (2 * k.val)) 3 11 :=
      acc_step d L fl tab (wL L).val (2 * t1.val) (2 * k.val) 0 _ (hRA _) ⟨10, by decide⟩ ⟨3, by decide⟩ _ rfl _ hwA_10 _ (k1_off19_form ⟨0, by decide⟩ _ _) _ hc16
    have sA3_11 : addf (AccMath.accVec (rowF fl tab (wL L).val (2 * t1.val) (2 * k.val)) (offF fl (wL L).val (2 * t1.val) (2 * k.val)) 3 11) (shapeCast S16 (pair0_lt.sl.v2093 d L tab k r g1 g2 hR hin) hc16) = AccMath.accVec (rowF fl tab (wL L).val (2 * t1.val) (2 * k.val)) (offF fl (wL L).val (2 * t1.val) (2 * k.val)) 3 12 :=
      acc_step d L fl tab (wL L).val (2 * t1.val) (2 * k.val) 0 _ (hRA _) ⟨11, by decide⟩ ⟨3, by decide⟩ _ rfl _ hwA_11 _ (k1_off20_form ⟨0, by decide⟩ _ _) _ hc16
    have sA3_12 : addf (AccMath.accVec (rowF fl tab (wL L).val (2 * t1.val) (2 * k.val)) (offF fl (wL L).val (2 * t1.val) (2 * k.val)) 3 12) (shapeCast S16 (pair0_lt.sl.v2129 d L tab k r g1 g2 hR hin) hc16) = AccMath.accVec (rowF fl tab (wL L).val (2 * t1.val) (2 * k.val)) (offF fl (wL L).val (2 * t1.val) (2 * k.val)) 3 13 :=
      acc_step d L fl tab (wL L).val (2 * t1.val) (2 * k.val) 0 _ (hRA _) ⟨12, by decide⟩ ⟨3, by decide⟩ _ rfl _ hwA_12 _ (k1_off21_form ⟨0, by decide⟩ _ _) _ hc16
    have sA3_13 : addf (AccMath.accVec (rowF fl tab (wL L).val (2 * t1.val) (2 * k.val)) (offF fl (wL L).val (2 * t1.val) (2 * k.val)) 3 13) (shapeCast S16 (pair0_lt.sl.v2165 d L tab k r g1 g2 hR hin) hc16) = AccMath.accVec (rowF fl tab (wL L).val (2 * t1.val) (2 * k.val)) (offF fl (wL L).val (2 * t1.val) (2 * k.val)) 3 14 :=
      acc_step d L fl tab (wL L).val (2 * t1.val) (2 * k.val) 0 _ (hRA _) ⟨13, by decide⟩ ⟨3, by decide⟩ _ rfl _ hwA_13 _ (k1_off22_form ⟨0, by decide⟩ _ _) _ hc16
    have sA3_14 : addf (AccMath.accVec (rowF fl tab (wL L).val (2 * t1.val) (2 * k.val)) (offF fl (wL L).val (2 * t1.val) (2 * k.val)) 3 14) (shapeCast S16 (pair0_lt.sl.v2201 d L tab k r g1 g2 hR hin) hc16) = AccMath.accVec (rowF fl tab (wL L).val (2 * t1.val) (2 * k.val)) (offF fl (wL L).val (2 * t1.val) (2 * k.val)) 3 15 :=
      acc_step d L fl tab (wL L).val (2 * t1.val) (2 * k.val) 0 _ (hRA _) ⟨14, by decide⟩ ⟨3, by decide⟩ _ rfl _ hwA_14 _ (k1_off23_form ⟨0, by decide⟩ _ _) _ hc16
    have sA3_15 : addf (AccMath.accVec (rowF fl tab (wL L).val (2 * t1.val) (2 * k.val)) (offF fl (wL L).val (2 * t1.val) (2 * k.val)) 3 15) (shapeCast S16 (pair0_lt.sl.v2237 d L tab k r g1 g2 hR hin) hc16) = AccMath.accVec (rowF fl tab (wL L).val (2 * t1.val) (2 * k.val)) (offF fl (wL L).val (2 * t1.val) (2 * k.val)) 3 16 :=
      acc_step d L fl tab (wL L).val (2 * t1.val) (2 * k.val) 0 _ (hRA _) ⟨15, by decide⟩ ⟨3, by decide⟩ _ rfl _ hwA_15 _ (k1_off24_form ⟨0, by decide⟩ _ _) _ hc16
    have sA3_16 : addf (AccMath.accVec (rowF fl tab (wL L).val (2 * t1.val) (2 * k.val)) (offF fl (wL L).val (2 * t1.val) (2 * k.val)) 3 16) (shapeCast S16 (pair0_lt.sl.v1697_1 d L tab k r g1 g2 hR hin) hc16) = AccMath.accVec (rowF fl tab (wL L).val (2 * t1.val) (2 * k.val)) (offF fl (wL L).val (2 * t1.val) (2 * k.val)) 3 17 :=
      acc_step d L fl tab (wL L).val (2 * t1.val) (2 * k.val) 0 _ (hRA _) ⟨16, by decide⟩ ⟨3, by decide⟩ _ rfl _ hwA_16 _ (k1_off9_form ⟨1, by decide⟩ _ _) _ hc16
    have sA3_17 : addf (AccMath.accVec (rowF fl tab (wL L).val (2 * t1.val) (2 * k.val)) (offF fl (wL L).val (2 * t1.val) (2 * k.val)) 3 17) (shapeCast S16 (pair0_lt.sl.v1733_1 d L tab k r g1 g2 hR hin) hc16) = AccMath.accVec (rowF fl tab (wL L).val (2 * t1.val) (2 * k.val)) (offF fl (wL L).val (2 * t1.val) (2 * k.val)) 3 18 :=
      acc_step d L fl tab (wL L).val (2 * t1.val) (2 * k.val) 0 _ (hRA _) ⟨17, by decide⟩ ⟨3, by decide⟩ _ rfl _ hwA_17 _ (k1_off10_form ⟨1, by decide⟩ _ _) _ hc16
    have sA3_18 : addf (AccMath.accVec (rowF fl tab (wL L).val (2 * t1.val) (2 * k.val)) (offF fl (wL L).val (2 * t1.val) (2 * k.val)) 3 18) (shapeCast S16 (pair0_lt.sl.v1769_1 d L tab k r g1 g2 hR hin) hc16) = AccMath.accVec (rowF fl tab (wL L).val (2 * t1.val) (2 * k.val)) (offF fl (wL L).val (2 * t1.val) (2 * k.val)) 3 19 :=
      acc_step d L fl tab (wL L).val (2 * t1.val) (2 * k.val) 0 _ (hRA _) ⟨18, by decide⟩ ⟨3, by decide⟩ _ rfl _ hwA_18 _ (k1_off11_form ⟨1, by decide⟩ _ _) _ hc16
    have sA3_19 : addf (AccMath.accVec (rowF fl tab (wL L).val (2 * t1.val) (2 * k.val)) (offF fl (wL L).val (2 * t1.val) (2 * k.val)) 3 19) (shapeCast S16 (pair0_lt.sl.v1805_1 d L tab k r g1 g2 hR hin) hc16) = AccMath.accVec (rowF fl tab (wL L).val (2 * t1.val) (2 * k.val)) (offF fl (wL L).val (2 * t1.val) (2 * k.val)) 3 20 :=
      acc_step d L fl tab (wL L).val (2 * t1.val) (2 * k.val) 0 _ (hRA _) ⟨19, by decide⟩ ⟨3, by decide⟩ _ rfl _ hwA_19 _ (k1_off12_form ⟨1, by decide⟩ _ _) _ hc16
    have sA3_20 : addf (AccMath.accVec (rowF fl tab (wL L).val (2 * t1.val) (2 * k.val)) (offF fl (wL L).val (2 * t1.val) (2 * k.val)) 3 20) (shapeCast S16 (pair0_lt.sl.v1841_1 d L tab k r g1 g2 hR hin) hc16) = AccMath.accVec (rowF fl tab (wL L).val (2 * t1.val) (2 * k.val)) (offF fl (wL L).val (2 * t1.val) (2 * k.val)) 3 21 :=
      acc_step d L fl tab (wL L).val (2 * t1.val) (2 * k.val) 0 _ (hRA _) ⟨20, by decide⟩ ⟨3, by decide⟩ _ rfl _ hwA_20 _ (k1_off13_form ⟨1, by decide⟩ _ _) _ hc16
    have sA3_21 : addf (AccMath.accVec (rowF fl tab (wL L).val (2 * t1.val) (2 * k.val)) (offF fl (wL L).val (2 * t1.val) (2 * k.val)) 3 21) (shapeCast S16 (pair0_lt.sl.v1877_1 d L tab k r g1 g2 hR hin) hc16) = AccMath.accVec (rowF fl tab (wL L).val (2 * t1.val) (2 * k.val)) (offF fl (wL L).val (2 * t1.val) (2 * k.val)) 3 22 :=
      acc_step d L fl tab (wL L).val (2 * t1.val) (2 * k.val) 0 _ (hRA _) ⟨21, by decide⟩ ⟨3, by decide⟩ _ rfl _ hwA_21 _ (k1_off14_form ⟨1, by decide⟩ _ _) _ hc16
    have sA3_22 : addf (AccMath.accVec (rowF fl tab (wL L).val (2 * t1.val) (2 * k.val)) (offF fl (wL L).val (2 * t1.val) (2 * k.val)) 3 22) (shapeCast S16 (pair0_lt.sl.v1913_1 d L tab k r g1 g2 hR hin) hc16) = AccMath.accVec (rowF fl tab (wL L).val (2 * t1.val) (2 * k.val)) (offF fl (wL L).val (2 * t1.val) (2 * k.val)) 3 23 :=
      acc_step d L fl tab (wL L).val (2 * t1.val) (2 * k.val) 0 _ (hRA _) ⟨22, by decide⟩ ⟨3, by decide⟩ _ rfl _ hwA_22 _ (k1_off15_form ⟨1, by decide⟩ _ _) _ hc16
    have sA3_23 : addf (AccMath.accVec (rowF fl tab (wL L).val (2 * t1.val) (2 * k.val)) (offF fl (wL L).val (2 * t1.val) (2 * k.val)) 3 23) (shapeCast S16 (pair0_lt.sl.v1949_1 d L tab k r g1 g2 hR hin) hc16) = AccMath.accVec (rowF fl tab (wL L).val (2 * t1.val) (2 * k.val)) (offF fl (wL L).val (2 * t1.val) (2 * k.val)) 3 24 :=
      acc_step d L fl tab (wL L).val (2 * t1.val) (2 * k.val) 0 _ (hRA _) ⟨23, by decide⟩ ⟨3, by decide⟩ _ rfl _ hwA_23 _ (k1_off16_form ⟨1, by decide⟩ _ _) _ hc16
    have sA3_24 : addf (AccMath.accVec (rowF fl tab (wL L).val (2 * t1.val) (2 * k.val)) (offF fl (wL L).val (2 * t1.val) (2 * k.val)) 3 24) (shapeCast S16 (pair0_lt.sl.v1985_1 d L tab k r g1 g2 hR hin) hc16) = AccMath.accVec (rowF fl tab (wL L).val (2 * t1.val) (2 * k.val)) (offF fl (wL L).val (2 * t1.val) (2 * k.val)) 3 25 :=
      acc_step d L fl tab (wL L).val (2 * t1.val) (2 * k.val) 0 _ (hRA _) ⟨24, by decide⟩ ⟨3, by decide⟩ _ rfl _ hwA_24 _ (k1_off17_form ⟨1, by decide⟩ _ _) _ hc16
    have sA3_25 : addf (AccMath.accVec (rowF fl tab (wL L).val (2 * t1.val) (2 * k.val)) (offF fl (wL L).val (2 * t1.val) (2 * k.val)) 3 25) (shapeCast S16 (pair0_lt.sl.v2021_1 d L tab k r g1 g2 hR hin) hc16) = AccMath.accVec (rowF fl tab (wL L).val (2 * t1.val) (2 * k.val)) (offF fl (wL L).val (2 * t1.val) (2 * k.val)) 3 26 :=
      acc_step d L fl tab (wL L).val (2 * t1.val) (2 * k.val) 0 _ (hRA _) ⟨25, by decide⟩ ⟨3, by decide⟩ _ rfl _ hwA_25 _ (k1_off18_form ⟨1, by decide⟩ _ _) _ hc16
    have sA3_26 : addf (AccMath.accVec (rowF fl tab (wL L).val (2 * t1.val) (2 * k.val)) (offF fl (wL L).val (2 * t1.val) (2 * k.val)) 3 26) (shapeCast S16 (pair0_lt.sl.v2057_1 d L tab k r g1 g2 hR hin) hc16) = AccMath.accVec (rowF fl tab (wL L).val (2 * t1.val) (2 * k.val)) (offF fl (wL L).val (2 * t1.val) (2 * k.val)) 3 27 :=
      acc_step d L fl tab (wL L).val (2 * t1.val) (2 * k.val) 0 _ (hRA _) ⟨26, by decide⟩ ⟨3, by decide⟩ _ rfl _ hwA_26 _ (k1_off19_form ⟨1, by decide⟩ _ _) _ hc16
    have sA3_27 : addf (AccMath.accVec (rowF fl tab (wL L).val (2 * t1.val) (2 * k.val)) (offF fl (wL L).val (2 * t1.val) (2 * k.val)) 3 27) (shapeCast S16 (pair0_lt.sl.v2093_1 d L tab k r g1 g2 hR hin) hc16) = AccMath.accVec (rowF fl tab (wL L).val (2 * t1.val) (2 * k.val)) (offF fl (wL L).val (2 * t1.val) (2 * k.val)) 3 28 :=
      acc_step d L fl tab (wL L).val (2 * t1.val) (2 * k.val) 0 _ (hRA _) ⟨27, by decide⟩ ⟨3, by decide⟩ _ rfl _ hwA_27 _ (k1_off20_form ⟨1, by decide⟩ _ _) _ hc16
    have sA3_28 : addf (AccMath.accVec (rowF fl tab (wL L).val (2 * t1.val) (2 * k.val)) (offF fl (wL L).val (2 * t1.val) (2 * k.val)) 3 28) (shapeCast S16 (pair0_lt.sl.v2129_1 d L tab k r g1 g2 hR hin) hc16) = AccMath.accVec (rowF fl tab (wL L).val (2 * t1.val) (2 * k.val)) (offF fl (wL L).val (2 * t1.val) (2 * k.val)) 3 29 :=
      acc_step d L fl tab (wL L).val (2 * t1.val) (2 * k.val) 0 _ (hRA _) ⟨28, by decide⟩ ⟨3, by decide⟩ _ rfl _ hwA_28 _ (k1_off21_form ⟨1, by decide⟩ _ _) _ hc16
    have sA3_29 : addf (AccMath.accVec (rowF fl tab (wL L).val (2 * t1.val) (2 * k.val)) (offF fl (wL L).val (2 * t1.val) (2 * k.val)) 3 29) (shapeCast S16 (pair0_lt.sl.v2165_1 d L tab k r g1 g2 hR hin) hc16) = AccMath.accVec (rowF fl tab (wL L).val (2 * t1.val) (2 * k.val)) (offF fl (wL L).val (2 * t1.val) (2 * k.val)) 3 30 :=
      acc_step d L fl tab (wL L).val (2 * t1.val) (2 * k.val) 0 _ (hRA _) ⟨29, by decide⟩ ⟨3, by decide⟩ _ rfl _ hwA_29 _ (k1_off22_form ⟨1, by decide⟩ _ _) _ hc16
    have sA3_30 : addf (AccMath.accVec (rowF fl tab (wL L).val (2 * t1.val) (2 * k.val)) (offF fl (wL L).val (2 * t1.val) (2 * k.val)) 3 30) (shapeCast S16 (pair0_lt.sl.v2201_1 d L tab k r g1 g2 hR hin) hc16) = AccMath.accVec (rowF fl tab (wL L).val (2 * t1.val) (2 * k.val)) (offF fl (wL L).val (2 * t1.val) (2 * k.val)) 3 31 :=
      acc_step d L fl tab (wL L).val (2 * t1.val) (2 * k.val) 0 _ (hRA _) ⟨30, by decide⟩ ⟨3, by decide⟩ _ rfl _ hwA_30 _ (k1_off23_form ⟨1, by decide⟩ _ _) _ hc16
    have sA3_31 : addf (AccMath.accVec (rowF fl tab (wL L).val (2 * t1.val) (2 * k.val)) (offF fl (wL L).val (2 * t1.val) (2 * k.val)) 3 31) (shapeCast S16 (pair0_lt.sl.v2237_1 d L tab k r g1 g2 hR hin) hc16) = AccMath.accVec (rowF fl tab (wL L).val (2 * t1.val) (2 * k.val)) (offF fl (wL L).val (2 * t1.val) (2 * k.val)) 3 32 :=
      acc_step d L fl tab (wL L).val (2 * t1.val) (2 * k.val) 0 _ (hRA _) ⟨31, by decide⟩ ⟨3, by decide⟩ _ rfl _ hwA_31 _ (k1_off24_form ⟨1, by decide⟩ _ _) _ hc16
    have sA3_32 : addf (AccMath.accVec (rowF fl tab (wL L).val (2 * t1.val) (2 * k.val)) (offF fl (wL L).val (2 * t1.val) (2 * k.val)) 3 32) (shapeCast S16 (pair0_lt.sl.v1697_2 d L tab k r g1 g2 hR hin) hc16) = AccMath.accVec (rowF fl tab (wL L).val (2 * t1.val) (2 * k.val)) (offF fl (wL L).val (2 * t1.val) (2 * k.val)) 3 33 :=
      acc_step d L fl tab (wL L).val (2 * t1.val) (2 * k.val) 0 _ (hRA _) ⟨32, by decide⟩ ⟨3, by decide⟩ _ rfl _ hwA_32 _ (k1_off9_form ⟨2, by decide⟩ _ _) _ hc16
    have sA3_33 : addf (AccMath.accVec (rowF fl tab (wL L).val (2 * t1.val) (2 * k.val)) (offF fl (wL L).val (2 * t1.val) (2 * k.val)) 3 33) (shapeCast S16 (pair0_lt.sl.v1733_2 d L tab k r g1 g2 hR hin) hc16) = AccMath.accVec (rowF fl tab (wL L).val (2 * t1.val) (2 * k.val)) (offF fl (wL L).val (2 * t1.val) (2 * k.val)) 3 34 :=
      acc_step d L fl tab (wL L).val (2 * t1.val) (2 * k.val) 0 _ (hRA _) ⟨33, by decide⟩ ⟨3, by decide⟩ _ rfl _ hwA_33 _ (k1_off10_form ⟨2, by decide⟩ _ _) _ hc16
    have sA3_34 : addf (AccMath.accVec (rowF fl tab (wL L).val (2 * t1.val) (2 * k.val)) (offF fl (wL L).val (2 * t1.val) (2 * k.val)) 3 34) (shapeCast S16 (pair0_lt.sl.v1769_2 d L tab k r g1 g2 hR hin) hc16) = AccMath.accVec (rowF fl tab (wL L).val (2 * t1.val) (2 * k.val)) (offF fl (wL L).val (2 * t1.val) (2 * k.val)) 3 35 :=
      acc_step d L fl tab (wL L).val (2 * t1.val) (2 * k.val) 0 _ (hRA _) ⟨34, by decide⟩ ⟨3, by decide⟩ _ rfl _ hwA_34 _ (k1_off11_form ⟨2, by decide⟩ _ _) _ hc16
    have sA3_35 : addf (AccMath.accVec (rowF fl tab (wL L).val (2 * t1.val) (2 * k.val)) (offF fl (wL L).val (2 * t1.val) (2 * k.val)) 3 35) (shapeCast S16 (pair0_lt.sl.v1805_2 d L tab k r g1 g2 hR hin) hc16) = AccMath.accVec (rowF fl tab (wL L).val (2 * t1.val) (2 * k.val)) (offF fl (wL L).val (2 * t1.val) (2 * k.val)) 3 36 :=
      acc_step d L fl tab (wL L).val (2 * t1.val) (2 * k.val) 0 _ (hRA _) ⟨35, by decide⟩ ⟨3, by decide⟩ _ rfl _ hwA_35 _ (k1_off12_form ⟨2, by decide⟩ _ _) _ hc16
    have sA3_36 : addf (AccMath.accVec (rowF fl tab (wL L).val (2 * t1.val) (2 * k.val)) (offF fl (wL L).val (2 * t1.val) (2 * k.val)) 3 36) (shapeCast S16 (pair0_lt.sl.v1841_2 d L tab k r g1 g2 hR hin) hc16) = AccMath.accVec (rowF fl tab (wL L).val (2 * t1.val) (2 * k.val)) (offF fl (wL L).val (2 * t1.val) (2 * k.val)) 3 37 :=
      acc_step d L fl tab (wL L).val (2 * t1.val) (2 * k.val) 0 _ (hRA _) ⟨36, by decide⟩ ⟨3, by decide⟩ _ rfl _ hwA_36 _ (k1_off13_form ⟨2, by decide⟩ _ _) _ hc16
    have sA3_37 : addf (AccMath.accVec (rowF fl tab (wL L).val (2 * t1.val) (2 * k.val)) (offF fl (wL L).val (2 * t1.val) (2 * k.val)) 3 37) (shapeCast S16 (pair0_lt.sl.v1877_2 d L tab k r g1 g2 hR hin) hc16) = AccMath.accVec (rowF fl tab (wL L).val (2 * t1.val) (2 * k.val)) (offF fl (wL L).val (2 * t1.val) (2 * k.val)) 3 38 :=
      acc_step d L fl tab (wL L).val (2 * t1.val) (2 * k.val) 0 _ (hRA _) ⟨37, by decide⟩ ⟨3, by decide⟩ _ rfl _ hwA_37 _ (k1_off14_form ⟨2, by decide⟩ _ _) _ hc16
    have sA3_38 : addf (AccMath.accVec (rowF fl tab (wL L).val (2 * t1.val) (2 * k.val)) (offF fl (wL L).val (2 * t1.val) (2 * k.val)) 3 38) (shapeCast S16 (pair0_lt.sl.v1913_2 d L tab k r g1 g2 hR hin) hc16) = AccMath.accVec (rowF fl tab (wL L).val (2 * t1.val) (2 * k.val)) (offF fl (wL L).val (2 * t1.val) (2 * k.val)) 3 39 :=
      acc_step d L fl tab (wL L).val (2 * t1.val) (2 * k.val) 0 _ (hRA _) ⟨38, by decide⟩ ⟨3, by decide⟩ _ rfl _ hwA_38 _ (k1_off15_form ⟨2, by decide⟩ _ _) _ hc16
    have sA3_39 : addf (AccMath.accVec (rowF fl tab (wL L).val (2 * t1.val) (2 * k.val)) (offF fl (wL L).val (2 * t1.val) (2 * k.val)) 3 39) (shapeCast S16 (pair0_lt.sl.v1949_2 d L tab k r g1 g2 hR hin) hc16) = AccMath.accVec (rowF fl tab (wL L).val (2 * t1.val) (2 * k.val)) (offF fl (wL L).val (2 * t1.val) (2 * k.val)) 3 40 :=
      acc_step d L fl tab (wL L).val (2 * t1.val) (2 * k.val) 0 _ (hRA _) ⟨39, by decide⟩ ⟨3, by decide⟩ _ rfl _ hwA_39 _ (k1_off16_form ⟨2, by decide⟩ _ _) _ hc16
    have sA3_40 : addf (AccMath.accVec (rowF fl tab (wL L).val (2 * t1.val) (2 * k.val)) (offF fl (wL L).val (2 * t1.val) (2 * k.val)) 3 40) (shapeCast S16 (pair0_lt.sl.v1985_2 d L tab k r g1 g2 hR hin) hc16) = AccMath.accVec (rowF fl tab (wL L).val (2 * t1.val) (2 * k.val)) (offF fl (wL L).val (2 * t1.val) (2 * k.val)) 3 41 :=
      acc_step d L fl tab (wL L).val (2 * t1.val) (2 * k.val) 0 _ (hRA _) ⟨40, by decide⟩ ⟨3, by decide⟩ _ rfl _ hwA_40 _ (k1_off17_form ⟨2, by decide⟩ _ _) _ hc16
    have sA3_41 : addf (AccMath.accVec (rowF fl tab (wL L).val (2 * t1.val) (2 * k.val)) (offF fl (wL L).val (2 * t1.val) (2 * k.val)) 3 41) (shapeCast S16 (pair0_lt.sl.v2021_2 d L tab k r g1 g2 hR hin) hc16) = AccMath.accVec (rowF fl tab (wL L).val (2 * t1.val) (2 * k.val)) (offF fl (wL L).val (2 * t1.val) (2 * k.val)) 3 42 :=
      acc_step d L fl tab (wL L).val (2 * t1.val) (2 * k.val) 0 _ (hRA _) ⟨41, by decide⟩ ⟨3, by decide⟩ _ rfl _ hwA_41 _ (k1_off18_form ⟨2, by decide⟩ _ _) _ hc16
    have sA3_42 : addf (AccMath.accVec (rowF fl tab (wL L).val (2 * t1.val) (2 * k.val)) (offF fl (wL L).val (2 * t1.val) (2 * k.val)) 3 42) (shapeCast S16 (pair0_lt.sl.v2057_2 d L tab k r g1 g2 hR hin) hc16) = AccMath.accVec (rowF fl tab (wL L).val (2 * t1.val) (2 * k.val)) (offF fl (wL L).val (2 * t1.val) (2 * k.val)) 3 43 :=
      acc_step d L fl tab (wL L).val (2 * t1.val) (2 * k.val) 0 _ (hRA _) ⟨42, by decide⟩ ⟨3, by decide⟩ _ rfl _ hwA_42 _ (k1_off19_form ⟨2, by decide⟩ _ _) _ hc16
    have sA3_43 : addf (AccMath.accVec (rowF fl tab (wL L).val (2 * t1.val) (2 * k.val)) (offF fl (wL L).val (2 * t1.val) (2 * k.val)) 3 43) (shapeCast S16 (pair0_lt.sl.v2093_2 d L tab k r g1 g2 hR hin) hc16) = AccMath.accVec (rowF fl tab (wL L).val (2 * t1.val) (2 * k.val)) (offF fl (wL L).val (2 * t1.val) (2 * k.val)) 3 44 :=
      acc_step d L fl tab (wL L).val (2 * t1.val) (2 * k.val) 0 _ (hRA _) ⟨43, by decide⟩ ⟨3, by decide⟩ _ rfl _ hwA_43 _ (k1_off20_form ⟨2, by decide⟩ _ _) _ hc16
    have sA3_44 : addf (AccMath.accVec (rowF fl tab (wL L).val (2 * t1.val) (2 * k.val)) (offF fl (wL L).val (2 * t1.val) (2 * k.val)) 3 44) (shapeCast S16 (pair0_lt.sl.v2129_2 d L tab k r g1 g2 hR hin) hc16) = AccMath.accVec (rowF fl tab (wL L).val (2 * t1.val) (2 * k.val)) (offF fl (wL L).val (2 * t1.val) (2 * k.val)) 3 45 :=
      acc_step d L fl tab (wL L).val (2 * t1.val) (2 * k.val) 0 _ (hRA _) ⟨44, by decide⟩ ⟨3, by decide⟩ _ rfl _ hwA_44 _ (k1_off21_form ⟨2, by decide⟩ _ _) _ hc16
    have sA3_45 : addf (AccMath.accVec (rowF fl tab (wL L).val (2 * t1.val) (2 * k.val)) (offF fl (wL L).val (2 * t1.val) (2 * k.val)) 3 45) (shapeCast S16 (pair0_lt.sl.v2165_2 d L tab k r g1 g2 hR hin) hc16) = AccMath.accVec (rowF fl tab (wL L).val (2 * t1.val) (2 * k.val)) (offF fl (wL L).val (2 * t1.val) (2 * k.val)) 3 46 :=
      acc_step d L fl tab (wL L).val (2 * t1.val) (2 * k.val) 0 _ (hRA _) ⟨45, by decide⟩ ⟨3, by decide⟩ _ rfl _ hwA_45 _ (k1_off22_form ⟨2, by decide⟩ _ _) _ hc16
    have sA3_46 : addf (AccMath.accVec (rowF fl tab (wL L).val (2 * t1.val) (2 * k.val)) (offF fl (wL L).val (2 * t1.val) (2 * k.val)) 3 46) (shapeCast S16 (pair0_lt.sl.v2201_2 d L tab k r g1 g2 hR hin) hc16) = AccMath.accVec (rowF fl tab (wL L).val (2 * t1.val) (2 * k.val)) (offF fl (wL L).val (2 * t1.val) (2 * k.val)) 3 47 :=
      acc_step d L fl tab (wL L).val (2 * t1.val) (2 * k.val) 0 _ (hRA _) ⟨46, by decide⟩ ⟨3, by decide⟩ _ rfl _ hwA_46 _ (k1_off23_form ⟨2, by decide⟩ _ _) _ hc16
    have sA3_47 : addf (AccMath.accVec (rowF fl tab (wL L).val (2 * t1.val) (2 * k.val)) (offF fl (wL L).val (2 * t1.val) (2 * k.val)) 3 47) (shapeCast S16 (pair0_lt.sl.v2237_2 d L tab k r g1 g2 hR hin) hc16) = AccMath.accVec (rowF fl tab (wL L).val (2 * t1.val) (2 * k.val)) (offF fl (wL L).val (2 * t1.val) (2 * k.val)) 3 48 :=
      acc_step d L fl tab (wL L).val (2 * t1.val) (2 * k.val) 0 _ (hRA _) ⟨47, by decide⟩ ⟨3, by decide⟩ _ rfl _ hwA_47 _ (k1_off24_form ⟨2, by decide⟩ _ _) _ hc16
    have sA3_48 : addf (AccMath.accVec (rowF fl tab (wL L).val (2 * t1.val) (2 * k.val)) (offF fl (wL L).val (2 * t1.val) (2 * k.val)) 3 48) (shapeCast S16 (pair0_lt.sl.v1486 d L tab k r g1 g2 hR hin) hc16) = AccMath.accVec (rowF fl tab (wL L).val (2 * t1.val) (2 * k.val)) (offF fl (wL L).val (2 * t1.val) (2 * k.val)) 3 49 :=
      acc_step d L fl tab (wL L).val (2 * t1.val) (2 * k.val) 0 _ (hRA _) ⟨48, by decide⟩ ⟨3, by decide⟩ _ rfl _ hwA_48 _ (k1_off26_form _ _) _ hc16
    have sA3_49 : addf (AccMath.accVec (rowF fl tab (wL L).val (2 * t1.val) (2 * k.val)) (offF fl (wL L).val (2 * t1.val) (2 * k.val)) 3 49) (shapeCast S16 (pair0_lt.sl.v1520 d L tab k r g1 g2 hR hin) hc16) = AccMath.accVec (rowF fl tab (wL L).val (2 * t1.val) (2 * k.val)) (offF fl (wL L).val (2 * t1.val) (2 * k.val)) 3 50 :=
      acc_step d L fl tab (wL L).val (2 * t1.val) (2 * k.val) 0 _ (hRA _) ⟨49, by decide⟩ ⟨3, by decide⟩ _ rfl _ hwA_49 _ (k1_off27_form _ _) _ hc16
    have hPA3 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val)) (offF fl (wL L).val (2 * t1.val) (2 * k.val)) 3 0) (shapeCast S16 (pair0_lt.sl.v1697 d L tab k r g1 g2 hR hin) hc16)) (shapeCast S16 (pair0_lt.sl.v1733 d L tab k r g1 g2 hR hin) hc16)) (shapeCast S16 (pair0_lt.sl.v1769 d L tab k r g1 g2 hR hin) hc16)) (shapeCast S16 (pair0_lt.sl.v1805 d L tab k r g1 g2 hR hin) hc16)) (shapeCast S16 (pair0_lt.sl.v1841 d L tab k r g1 g2 hR hin) hc16)) (shapeCast S16 (pair0_lt.sl.v1877 d L tab k r g1 g2 hR hin) hc16)) (shapeCast S16 (pair0_lt.sl.v1913 d L tab k r g1 g2 hR hin) hc16)) (shapeCast S16 (pair0_lt.sl.v1949 d L tab k r g1 g2 hR hin) hc16)) (shapeCast S16 (pair0_lt.sl.v1985 d L tab k r g1 g2 hR hin) hc16)) (shapeCast S16 (pair0_lt.sl.v2021 d L tab k r g1 g2 hR hin) hc16)) (shapeCast S16 (pair0_lt.sl.v2057 d L tab k r g1 g2 hR hin) hc16)) (shapeCast S16 (pair0_lt.sl.v2093 d L tab k r g1 g2 hR hin) hc16)) (shapeCast S16 (pair0_lt.sl.v2129 d L tab k r g1 g2 hR hin) hc16)) (shapeCast S16 (pair0_lt.sl.v2165 d L tab k r g1 g2 hR hin) hc16)) (shapeCast S16 (pair0_lt.sl.v2201 d L tab k r g1 g2 hR hin) hc16)) (shapeCast S16 (pair0_lt.sl.v2237 d L tab k r g1 g2 hR hin) hc16)) (shapeCast S16 (pair0_lt.sl.v1697_1 d L tab k r g1 g2 hR hin) hc16)) (shapeCast S16 (pair0_lt.sl.v1733_1 d L tab k r g1 g2 hR hin) hc16)) (shapeCast S16 (pair0_lt.sl.v1769_1 d L tab k r g1 g2 hR hin) hc16)) (shapeCast S16 (pair0_lt.sl.v1805_1 d L tab k r g1 g2 hR hin) hc16)) (shapeCast S16 (pair0_lt.sl.v1841_1 d L tab k r g1 g2 hR hin) hc16)) (shapeCast S16 (pair0_lt.sl.v1877_1 d L tab k r g1 g2 hR hin) hc16)) (shapeCast S16 (pair0_lt.sl.v1913_1 d L tab k r g1 g2 hR hin) hc16)) (shapeCast S16 (pair0_lt.sl.v1949_1 d L tab k r g1 g2 hR hin) hc16)) (shapeCast S16 (pair0_lt.sl.v1985_1 d L tab k r g1 g2 hR hin) hc16)) (shapeCast S16 (pair0_lt.sl.v2021_1 d L tab k r g1 g2 hR hin) hc16)) (shapeCast S16 (pair0_lt.sl.v2057_1 d L tab k r g1 g2 hR hin) hc16)) (shapeCast S16 (pair0_lt.sl.v2093_1 d L tab k r g1 g2 hR hin) hc16)) (shapeCast S16 (pair0_lt.sl.v2129_1 d L tab k r g1 g2 hR hin) hc16)) (shapeCast S16 (pair0_lt.sl.v2165_1 d L tab k r g1 g2 hR hin) hc16)) (shapeCast S16 (pair0_lt.sl.v2201_1 d L tab k r g1 g2 hR hin) hc16)) (shapeCast S16 (pair0_lt.sl.v2237_1 d L tab k r g1 g2 hR hin) hc16)) (shapeCast S16 (pair0_lt.sl.v1697_2 d L tab k r g1 g2 hR hin) hc16)) (shapeCast S16 (pair0_lt.sl.v1733_2 d L tab k r g1 g2 hR hin) hc16)) (shapeCast S16 (pair0_lt.sl.v1769_2 d L tab k r g1 g2 hR hin) hc16)) (shapeCast S16 (pair0_lt.sl.v1805_2 d L tab k r g1 g2 hR hin) hc16)) (shapeCast S16 (pair0_lt.sl.v1841_2 d L tab k r g1 g2 hR hin) hc16)) (shapeCast S16 (pair0_lt.sl.v1877_2 d L tab k r g1 g2 hR hin) hc16)) (shapeCast S16 (pair0_lt.sl.v1913_2 d L tab k r g1 g2 hR hin) hc16)) (shapeCast S16 (pair0_lt.sl.v1949_2 d L tab k r g1 g2 hR hin) hc16)) (shapeCast S16 (pair0_lt.sl.v1985_2 d L tab k r g1 g2 hR hin) hc16)) (shapeCast S16 (pair0_lt.sl.v2021_2 d L tab k r g1 g2 hR hin) hc16)) (shapeCast S16 (pair0_lt.sl.v2057_2 d L tab k r g1 g2 hR hin) hc16)) (shapeCast S16 (pair0_lt.sl.v2093_2 d L tab k r g1 g2 hR hin) hc16)) (shapeCast S16 (pair0_lt.sl.v2129_2 d L tab k r g1 g2 hR hin) hc16)) (shapeCast S16 (pair0_lt.sl.v2165_2 d L tab k r g1 g2 hR hin) hc16)) (shapeCast S16 (pair0_lt.sl.v2201_2 d L tab k r g1 g2 hR hin) hc16)) (shapeCast S16 (pair0_lt.sl.v2237_2 d L tab k r g1 g2 hR hin) hc16)) (shapeCast S16 (pair0_lt.sl.v1486 d L tab k r g1 g2 hR hin) hc16)) (shapeCast S16 (pair0_lt.sl.v1520 d L tab k r g1 g2 hR hin) hc16)) hc1 x = Spec.bagPartial fl tab (128 * (wL L).val + 16 * (2 * t1.val) + (2 * k.val)) (16 * 3 + (x 2).val) 50 := fun x => by
      rw [sA3_0, sA3_1, sA3_2, sA3_3, sA3_4, sA3_5, sA3_6, sA3_7, sA3_8, sA3_9, sA3_10, sA3_11, sA3_12, sA3_13, sA3_14, sA3_15, sA3_16, sA3_17, sA3_18, sA3_19, sA3_20, sA3_21, sA3_22, sA3_23, sA3_24, sA3_25, sA3_26, sA3_27, sA3_28, sA3_29, sA3_30, sA3_31, sA3_32, sA3_33, sA3_34, sA3_35, sA3_36, sA3_37, sA3_38, sA3_39, sA3_40, sA3_41, sA3_42, sA3_43, sA3_44, sA3_45, sA3_46, sA3_47, sA3_48, sA3_49]; exact payload_ok fl tab (wL L).val (2 * t1.val) (2 * k.val) ⟨3, by decide⟩ hc1 x
    have hwB_0 : pair0_lt.sl.v1667_3 d L k g2 = Spec.tcol (blkWord fl (wL L).val (2 * t1.val) (64 * (2 * k.val + 1) + 0)) := by
      refine (rv_extract d L g2 (k1_off35 k ⟨0, by decide⟩) (k1_off35_inb k ⟨0, by decide⟩) (by decide) 0 (by decide) (by decide) (by decide)).trans ?_
      exact rv_word d L fl (wL L).val (2 * t1.val) 0 (2 * k.val + 1) 0 (by decide) (by omega) (by decide) g2 hV0 _
        (by rw [k1_off35_eq k ⟨0, by decide⟩]; show 128 * k.val + 16 * 0 + 64 + 0 = 1024 * 0 + 64 * (2 * k.val + 1) + 0; omega) _
    have hwB_1 : pair0_lt.sl.v1703_3 d L k g2 = Spec.tcol (blkWord fl (wL L).val (2 * t1.val) (64 * (2 * k.val + 1) + 1)) := by
      refine (rv_extract d L g2 (k1_off35 k ⟨0, by decide⟩) (k1_off35_inb k ⟨0, by decide⟩) (by decide) 1 (by decide) (by decide) (by decide)).trans ?_
      exact rv_word d L fl (wL L).val (2 * t1.val) 0 (2 * k.val + 1) 1 (by decide) (by omega) (by decide) g2 hV0 _
        (by rw [k1_off35_eq k ⟨0, by decide⟩]; show 128 * k.val + 16 * 0 + 64 + 1 = 1024 * 0 + 64 * (2 * k.val + 1) + 1; omega) _
    have hwB_2 : pair0_lt.sl.v1739_3 d L k g2 = Spec.tcol (blkWord fl (wL L).val (2 * t1.val) (64 * (2 * k.val + 1) + 2)) := by
      refine (rv_extract d L g2 (k1_off35 k ⟨0, by decide⟩) (k1_off35_inb k ⟨0, by decide⟩) (by decide) 2 (by decide) (by decide) (by decide)).trans ?_
      exact rv_word d L fl (wL L).val (2 * t1.val) 0 (2 * k.val + 1) 2 (by decide) (by omega) (by decide) g2 hV0 _
        (by rw [k1_off35_eq k ⟨0, by decide⟩]; show 128 * k.val + 16 * 0 + 64 + 2 = 1024 * 0 + 64 * (2 * k.val + 1) + 2; omega) _
    have hwB_3 : pair0_lt.sl.v1775_3 d L k g2 = Spec.tcol (blkWord fl (wL L).val (2 * t1.val) (64 * (2 * k.val + 1) + 3)) := by
      refine (rv_extract d L g2 (k1_off35 k ⟨0, by decide⟩) (k1_off35_inb k ⟨0, by decide⟩) (by decide) 3 (by decide) (by decide) (by decide)).trans ?_
      exact rv_word d L fl (wL L).val (2 * t1.val) 0 (2 * k.val + 1) 3 (by decide) (by omega) (by decide) g2 hV0 _
        (by rw [k1_off35_eq k ⟨0, by decide⟩]; show 128 * k.val + 16 * 0 + 64 + 3 = 1024 * 0 + 64 * (2 * k.val + 1) + 3; omega) _
    have hwB_4 : pair0_lt.sl.v1811_3 d L k g2 = Spec.tcol (blkWord fl (wL L).val (2 * t1.val) (64 * (2 * k.val + 1) + 4)) := by
      refine (rv_extract d L g2 (k1_off35 k ⟨0, by decide⟩) (k1_off35_inb k ⟨0, by decide⟩) (by decide) 4 (by decide) (by decide) (by decide)).trans ?_
      exact rv_word d L fl (wL L).val (2 * t1.val) 0 (2 * k.val + 1) 4 (by decide) (by omega) (by decide) g2 hV0 _
        (by rw [k1_off35_eq k ⟨0, by decide⟩]; show 128 * k.val + 16 * 0 + 64 + 4 = 1024 * 0 + 64 * (2 * k.val + 1) + 4; omega) _
    have hwB_5 : pair0_lt.sl.v1847_3 d L k g2 = Spec.tcol (blkWord fl (wL L).val (2 * t1.val) (64 * (2 * k.val + 1) + 5)) := by
      refine (rv_extract d L g2 (k1_off35 k ⟨0, by decide⟩) (k1_off35_inb k ⟨0, by decide⟩) (by decide) 5 (by decide) (by decide) (by decide)).trans ?_
      exact rv_word d L fl (wL L).val (2 * t1.val) 0 (2 * k.val + 1) 5 (by decide) (by omega) (by decide) g2 hV0 _
        (by rw [k1_off35_eq k ⟨0, by decide⟩]; show 128 * k.val + 16 * 0 + 64 + 5 = 1024 * 0 + 64 * (2 * k.val + 1) + 5; omega) _
    have hwB_6 : pair0_lt.sl.v1883_3 d L k g2 = Spec.tcol (blkWord fl (wL L).val (2 * t1.val) (64 * (2 * k.val + 1) + 6)) := by
      refine (rv_extract d L g2 (k1_off35 k ⟨0, by decide⟩) (k1_off35_inb k ⟨0, by decide⟩) (by decide) 6 (by decide) (by decide) (by decide)).trans ?_
      exact rv_word d L fl (wL L).val (2 * t1.val) 0 (2 * k.val + 1) 6 (by decide) (by omega) (by decide) g2 hV0 _
        (by rw [k1_off35_eq k ⟨0, by decide⟩]; show 128 * k.val + 16 * 0 + 64 + 6 = 1024 * 0 + 64 * (2 * k.val + 1) + 6; omega) _
    have hwB_7 : pair0_lt.sl.v1919_3 d L k g2 = Spec.tcol (blkWord fl (wL L).val (2 * t1.val) (64 * (2 * k.val + 1) + 7)) := by
      refine (rv_extract d L g2 (k1_off35 k ⟨0, by decide⟩) (k1_off35_inb k ⟨0, by decide⟩) (by decide) 7 (by decide) (by decide) (by decide)).trans ?_
      exact rv_word d L fl (wL L).val (2 * t1.val) 0 (2 * k.val + 1) 7 (by decide) (by omega) (by decide) g2 hV0 _
        (by rw [k1_off35_eq k ⟨0, by decide⟩]; show 128 * k.val + 16 * 0 + 64 + 7 = 1024 * 0 + 64 * (2 * k.val + 1) + 7; omega) _
    have hwB_8 : pair0_lt.sl.v1955_3 d L k g2 = Spec.tcol (blkWord fl (wL L).val (2 * t1.val) (64 * (2 * k.val + 1) + 8)) := by
      refine (rv_extract d L g2 (k1_off35 k ⟨0, by decide⟩) (k1_off35_inb k ⟨0, by decide⟩) (by decide) 8 (by decide) (by decide) (by decide)).trans ?_
      exact rv_word d L fl (wL L).val (2 * t1.val) 0 (2 * k.val + 1) 8 (by decide) (by omega) (by decide) g2 hV0 _
        (by rw [k1_off35_eq k ⟨0, by decide⟩]; show 128 * k.val + 16 * 0 + 64 + 8 = 1024 * 0 + 64 * (2 * k.val + 1) + 8; omega) _
    have hwB_9 : pair0_lt.sl.v1991_3 d L k g2 = Spec.tcol (blkWord fl (wL L).val (2 * t1.val) (64 * (2 * k.val + 1) + 9)) := by
      refine (rv_extract d L g2 (k1_off35 k ⟨0, by decide⟩) (k1_off35_inb k ⟨0, by decide⟩) (by decide) 9 (by decide) (by decide) (by decide)).trans ?_
      exact rv_word d L fl (wL L).val (2 * t1.val) 0 (2 * k.val + 1) 9 (by decide) (by omega) (by decide) g2 hV0 _
        (by rw [k1_off35_eq k ⟨0, by decide⟩]; show 128 * k.val + 16 * 0 + 64 + 9 = 1024 * 0 + 64 * (2 * k.val + 1) + 9; omega) _
    have hwB_10 : pair0_lt.sl.v2027_3 d L k g2 = Spec.tcol (blkWord fl (wL L).val (2 * t1.val) (64 * (2 * k.val + 1) + 10)) := by
      refine (rv_extract d L g2 (k1_off35 k ⟨0, by decide⟩) (k1_off35_inb k ⟨0, by decide⟩) (by decide) 10 (by decide) (by decide) (by decide)).trans ?_
      exact rv_word d L fl (wL L).val (2 * t1.val) 0 (2 * k.val + 1) 10 (by decide) (by omega) (by decide) g2 hV0 _
        (by rw [k1_off35_eq k ⟨0, by decide⟩]; show 128 * k.val + 16 * 0 + 64 + 10 = 1024 * 0 + 64 * (2 * k.val + 1) + 10; omega) _
    have hwB_11 : pair0_lt.sl.v2063_3 d L k g2 = Spec.tcol (blkWord fl (wL L).val (2 * t1.val) (64 * (2 * k.val + 1) + 11)) := by
      refine (rv_extract d L g2 (k1_off35 k ⟨0, by decide⟩) (k1_off35_inb k ⟨0, by decide⟩) (by decide) 11 (by decide) (by decide) (by decide)).trans ?_
      exact rv_word d L fl (wL L).val (2 * t1.val) 0 (2 * k.val + 1) 11 (by decide) (by omega) (by decide) g2 hV0 _
        (by rw [k1_off35_eq k ⟨0, by decide⟩]; show 128 * k.val + 16 * 0 + 64 + 11 = 1024 * 0 + 64 * (2 * k.val + 1) + 11; omega) _
    have hwB_12 : pair0_lt.sl.v2099_3 d L k g2 = Spec.tcol (blkWord fl (wL L).val (2 * t1.val) (64 * (2 * k.val + 1) + 12)) := by
      refine (rv_extract d L g2 (k1_off35 k ⟨0, by decide⟩) (k1_off35_inb k ⟨0, by decide⟩) (by decide) 12 (by decide) (by decide) (by decide)).trans ?_
      exact rv_word d L fl (wL L).val (2 * t1.val) 0 (2 * k.val + 1) 12 (by decide) (by omega) (by decide) g2 hV0 _
        (by rw [k1_off35_eq k ⟨0, by decide⟩]; show 128 * k.val + 16 * 0 + 64 + 12 = 1024 * 0 + 64 * (2 * k.val + 1) + 12; omega) _
    have hwB_13 : pair0_lt.sl.v2135_3 d L k g2 = Spec.tcol (blkWord fl (wL L).val (2 * t1.val) (64 * (2 * k.val + 1) + 13)) := by
      refine (rv_extract d L g2 (k1_off35 k ⟨0, by decide⟩) (k1_off35_inb k ⟨0, by decide⟩) (by decide) 13 (by decide) (by decide) (by decide)).trans ?_
      exact rv_word d L fl (wL L).val (2 * t1.val) 0 (2 * k.val + 1) 13 (by decide) (by omega) (by decide) g2 hV0 _
        (by rw [k1_off35_eq k ⟨0, by decide⟩]; show 128 * k.val + 16 * 0 + 64 + 13 = 1024 * 0 + 64 * (2 * k.val + 1) + 13; omega) _
    have hwB_14 : pair0_lt.sl.v2171_3 d L k g2 = Spec.tcol (blkWord fl (wL L).val (2 * t1.val) (64 * (2 * k.val + 1) + 14)) := by
      refine (rv_extract d L g2 (k1_off35 k ⟨0, by decide⟩) (k1_off35_inb k ⟨0, by decide⟩) (by decide) 14 (by decide) (by decide) (by decide)).trans ?_
      exact rv_word d L fl (wL L).val (2 * t1.val) 0 (2 * k.val + 1) 14 (by decide) (by omega) (by decide) g2 hV0 _
        (by rw [k1_off35_eq k ⟨0, by decide⟩]; show 128 * k.val + 16 * 0 + 64 + 14 = 1024 * 0 + 64 * (2 * k.val + 1) + 14; omega) _
    have hwB_15 : pair0_lt.sl.v2207_3 d L k g2 = Spec.tcol (blkWord fl (wL L).val (2 * t1.val) (64 * (2 * k.val + 1) + 15)) := by
      refine (rv_extract d L g2 (k1_off35 k ⟨0, by decide⟩) (k1_off35_inb k ⟨0, by decide⟩) (by decide) 15 (by decide) (by decide) (by decide)).trans ?_
      exact rv_word d L fl (wL L).val (2 * t1.val) 0 (2 * k.val + 1) 15 (by decide) (by omega) (by decide) g2 hV0 _
        (by rw [k1_off35_eq k ⟨0, by decide⟩]; show 128 * k.val + 16 * 0 + 64 + 15 = 1024 * 0 + 64 * (2 * k.val + 1) + 15; omega) _
    have hwB_16 : pair0_lt.sl.v1667_4 d L k g2 = Spec.tcol (blkWord fl (wL L).val (2 * t1.val) (64 * (2 * k.val + 1) + 16)) := by
      refine (rv_extract d L g2 (k1_off35 k ⟨1, by decide⟩) (k1_off35_inb k ⟨1, by decide⟩) (by decide) 0 (by decide) (by decide) (by decide)).trans ?_
      exact rv_word d L fl (wL L).val (2 * t1.val) 0 (2 * k.val + 1) 16 (by decide) (by omega) (by decide) g2 hV0 _
        (by rw [k1_off35_eq k ⟨1, by decide⟩]; show 128 * k.val + 16 * 1 + 64 + 0 = 1024 * 0 + 64 * (2 * k.val + 1) + 16; omega) _
    have hwB_17 : pair0_lt.sl.v1703_4 d L k g2 = Spec.tcol (blkWord fl (wL L).val (2 * t1.val) (64 * (2 * k.val + 1) + 17)) := by
      refine (rv_extract d L g2 (k1_off35 k ⟨1, by decide⟩) (k1_off35_inb k ⟨1, by decide⟩) (by decide) 1 (by decide) (by decide) (by decide)).trans ?_
      exact rv_word d L fl (wL L).val (2 * t1.val) 0 (2 * k.val + 1) 17 (by decide) (by omega) (by decide) g2 hV0 _
        (by rw [k1_off35_eq k ⟨1, by decide⟩]; show 128 * k.val + 16 * 1 + 64 + 1 = 1024 * 0 + 64 * (2 * k.val + 1) + 17; omega) _
    have hwB_18 : pair0_lt.sl.v1739_4 d L k g2 = Spec.tcol (blkWord fl (wL L).val (2 * t1.val) (64 * (2 * k.val + 1) + 18)) := by
      refine (rv_extract d L g2 (k1_off35 k ⟨1, by decide⟩) (k1_off35_inb k ⟨1, by decide⟩) (by decide) 2 (by decide) (by decide) (by decide)).trans ?_
      exact rv_word d L fl (wL L).val (2 * t1.val) 0 (2 * k.val + 1) 18 (by decide) (by omega) (by decide) g2 hV0 _
        (by rw [k1_off35_eq k ⟨1, by decide⟩]; show 128 * k.val + 16 * 1 + 64 + 2 = 1024 * 0 + 64 * (2 * k.val + 1) + 18; omega) _
    have hwB_19 : pair0_lt.sl.v1775_4 d L k g2 = Spec.tcol (blkWord fl (wL L).val (2 * t1.val) (64 * (2 * k.val + 1) + 19)) := by
      refine (rv_extract d L g2 (k1_off35 k ⟨1, by decide⟩) (k1_off35_inb k ⟨1, by decide⟩) (by decide) 3 (by decide) (by decide) (by decide)).trans ?_
      exact rv_word d L fl (wL L).val (2 * t1.val) 0 (2 * k.val + 1) 19 (by decide) (by omega) (by decide) g2 hV0 _
        (by rw [k1_off35_eq k ⟨1, by decide⟩]; show 128 * k.val + 16 * 1 + 64 + 3 = 1024 * 0 + 64 * (2 * k.val + 1) + 19; omega) _
    have hwB_20 : pair0_lt.sl.v1811_4 d L k g2 = Spec.tcol (blkWord fl (wL L).val (2 * t1.val) (64 * (2 * k.val + 1) + 20)) := by
      refine (rv_extract d L g2 (k1_off35 k ⟨1, by decide⟩) (k1_off35_inb k ⟨1, by decide⟩) (by decide) 4 (by decide) (by decide) (by decide)).trans ?_
      exact rv_word d L fl (wL L).val (2 * t1.val) 0 (2 * k.val + 1) 20 (by decide) (by omega) (by decide) g2 hV0 _
        (by rw [k1_off35_eq k ⟨1, by decide⟩]; show 128 * k.val + 16 * 1 + 64 + 4 = 1024 * 0 + 64 * (2 * k.val + 1) + 20; omega) _
    have hwB_21 : pair0_lt.sl.v1847_4 d L k g2 = Spec.tcol (blkWord fl (wL L).val (2 * t1.val) (64 * (2 * k.val + 1) + 21)) := by
      refine (rv_extract d L g2 (k1_off35 k ⟨1, by decide⟩) (k1_off35_inb k ⟨1, by decide⟩) (by decide) 5 (by decide) (by decide) (by decide)).trans ?_
      exact rv_word d L fl (wL L).val (2 * t1.val) 0 (2 * k.val + 1) 21 (by decide) (by omega) (by decide) g2 hV0 _
        (by rw [k1_off35_eq k ⟨1, by decide⟩]; show 128 * k.val + 16 * 1 + 64 + 5 = 1024 * 0 + 64 * (2 * k.val + 1) + 21; omega) _
    have hwB_22 : pair0_lt.sl.v1883_4 d L k g2 = Spec.tcol (blkWord fl (wL L).val (2 * t1.val) (64 * (2 * k.val + 1) + 22)) := by
      refine (rv_extract d L g2 (k1_off35 k ⟨1, by decide⟩) (k1_off35_inb k ⟨1, by decide⟩) (by decide) 6 (by decide) (by decide) (by decide)).trans ?_
      exact rv_word d L fl (wL L).val (2 * t1.val) 0 (2 * k.val + 1) 22 (by decide) (by omega) (by decide) g2 hV0 _
        (by rw [k1_off35_eq k ⟨1, by decide⟩]; show 128 * k.val + 16 * 1 + 64 + 6 = 1024 * 0 + 64 * (2 * k.val + 1) + 22; omega) _
    have hwB_23 : pair0_lt.sl.v1919_4 d L k g2 = Spec.tcol (blkWord fl (wL L).val (2 * t1.val) (64 * (2 * k.val + 1) + 23)) := by
      refine (rv_extract d L g2 (k1_off35 k ⟨1, by decide⟩) (k1_off35_inb k ⟨1, by decide⟩) (by decide) 7 (by decide) (by decide) (by decide)).trans ?_
      exact rv_word d L fl (wL L).val (2 * t1.val) 0 (2 * k.val + 1) 23 (by decide) (by omega) (by decide) g2 hV0 _
        (by rw [k1_off35_eq k ⟨1, by decide⟩]; show 128 * k.val + 16 * 1 + 64 + 7 = 1024 * 0 + 64 * (2 * k.val + 1) + 23; omega) _
    have hwB_24 : pair0_lt.sl.v1955_4 d L k g2 = Spec.tcol (blkWord fl (wL L).val (2 * t1.val) (64 * (2 * k.val + 1) + 24)) := by
      refine (rv_extract d L g2 (k1_off35 k ⟨1, by decide⟩) (k1_off35_inb k ⟨1, by decide⟩) (by decide) 8 (by decide) (by decide) (by decide)).trans ?_
      exact rv_word d L fl (wL L).val (2 * t1.val) 0 (2 * k.val + 1) 24 (by decide) (by omega) (by decide) g2 hV0 _
        (by rw [k1_off35_eq k ⟨1, by decide⟩]; show 128 * k.val + 16 * 1 + 64 + 8 = 1024 * 0 + 64 * (2 * k.val + 1) + 24; omega) _
    have hwB_25 : pair0_lt.sl.v1991_4 d L k g2 = Spec.tcol (blkWord fl (wL L).val (2 * t1.val) (64 * (2 * k.val + 1) + 25)) := by
      refine (rv_extract d L g2 (k1_off35 k ⟨1, by decide⟩) (k1_off35_inb k ⟨1, by decide⟩) (by decide) 9 (by decide) (by decide) (by decide)).trans ?_
      exact rv_word d L fl (wL L).val (2 * t1.val) 0 (2 * k.val + 1) 25 (by decide) (by omega) (by decide) g2 hV0 _
        (by rw [k1_off35_eq k ⟨1, by decide⟩]; show 128 * k.val + 16 * 1 + 64 + 9 = 1024 * 0 + 64 * (2 * k.val + 1) + 25; omega) _
    have hwB_26 : pair0_lt.sl.v2027_4 d L k g2 = Spec.tcol (blkWord fl (wL L).val (2 * t1.val) (64 * (2 * k.val + 1) + 26)) := by
      refine (rv_extract d L g2 (k1_off35 k ⟨1, by decide⟩) (k1_off35_inb k ⟨1, by decide⟩) (by decide) 10 (by decide) (by decide) (by decide)).trans ?_
      exact rv_word d L fl (wL L).val (2 * t1.val) 0 (2 * k.val + 1) 26 (by decide) (by omega) (by decide) g2 hV0 _
        (by rw [k1_off35_eq k ⟨1, by decide⟩]; show 128 * k.val + 16 * 1 + 64 + 10 = 1024 * 0 + 64 * (2 * k.val + 1) + 26; omega) _
    have hwB_27 : pair0_lt.sl.v2063_4 d L k g2 = Spec.tcol (blkWord fl (wL L).val (2 * t1.val) (64 * (2 * k.val + 1) + 27)) := by
      refine (rv_extract d L g2 (k1_off35 k ⟨1, by decide⟩) (k1_off35_inb k ⟨1, by decide⟩) (by decide) 11 (by decide) (by decide) (by decide)).trans ?_
      exact rv_word d L fl (wL L).val (2 * t1.val) 0 (2 * k.val + 1) 27 (by decide) (by omega) (by decide) g2 hV0 _
        (by rw [k1_off35_eq k ⟨1, by decide⟩]; show 128 * k.val + 16 * 1 + 64 + 11 = 1024 * 0 + 64 * (2 * k.val + 1) + 27; omega) _
    have hwB_28 : pair0_lt.sl.v2099_4 d L k g2 = Spec.tcol (blkWord fl (wL L).val (2 * t1.val) (64 * (2 * k.val + 1) + 28)) := by
      refine (rv_extract d L g2 (k1_off35 k ⟨1, by decide⟩) (k1_off35_inb k ⟨1, by decide⟩) (by decide) 12 (by decide) (by decide) (by decide)).trans ?_
      exact rv_word d L fl (wL L).val (2 * t1.val) 0 (2 * k.val + 1) 28 (by decide) (by omega) (by decide) g2 hV0 _
        (by rw [k1_off35_eq k ⟨1, by decide⟩]; show 128 * k.val + 16 * 1 + 64 + 12 = 1024 * 0 + 64 * (2 * k.val + 1) + 28; omega) _
    have hwB_29 : pair0_lt.sl.v2135_4 d L k g2 = Spec.tcol (blkWord fl (wL L).val (2 * t1.val) (64 * (2 * k.val + 1) + 29)) := by
      refine (rv_extract d L g2 (k1_off35 k ⟨1, by decide⟩) (k1_off35_inb k ⟨1, by decide⟩) (by decide) 13 (by decide) (by decide) (by decide)).trans ?_
      exact rv_word d L fl (wL L).val (2 * t1.val) 0 (2 * k.val + 1) 29 (by decide) (by omega) (by decide) g2 hV0 _
        (by rw [k1_off35_eq k ⟨1, by decide⟩]; show 128 * k.val + 16 * 1 + 64 + 13 = 1024 * 0 + 64 * (2 * k.val + 1) + 29; omega) _
    have hwB_30 : pair0_lt.sl.v2171_4 d L k g2 = Spec.tcol (blkWord fl (wL L).val (2 * t1.val) (64 * (2 * k.val + 1) + 30)) := by
      refine (rv_extract d L g2 (k1_off35 k ⟨1, by decide⟩) (k1_off35_inb k ⟨1, by decide⟩) (by decide) 14 (by decide) (by decide) (by decide)).trans ?_
      exact rv_word d L fl (wL L).val (2 * t1.val) 0 (2 * k.val + 1) 30 (by decide) (by omega) (by decide) g2 hV0 _
        (by rw [k1_off35_eq k ⟨1, by decide⟩]; show 128 * k.val + 16 * 1 + 64 + 14 = 1024 * 0 + 64 * (2 * k.val + 1) + 30; omega) _
    have hwB_31 : pair0_lt.sl.v2207_4 d L k g2 = Spec.tcol (blkWord fl (wL L).val (2 * t1.val) (64 * (2 * k.val + 1) + 31)) := by
      refine (rv_extract d L g2 (k1_off35 k ⟨1, by decide⟩) (k1_off35_inb k ⟨1, by decide⟩) (by decide) 15 (by decide) (by decide) (by decide)).trans ?_
      exact rv_word d L fl (wL L).val (2 * t1.val) 0 (2 * k.val + 1) 31 (by decide) (by omega) (by decide) g2 hV0 _
        (by rw [k1_off35_eq k ⟨1, by decide⟩]; show 128 * k.val + 16 * 1 + 64 + 15 = 1024 * 0 + 64 * (2 * k.val + 1) + 31; omega) _
    have hwB_32 : pair0_lt.sl.v1667_5 d L k g2 = Spec.tcol (blkWord fl (wL L).val (2 * t1.val) (64 * (2 * k.val + 1) + 32)) := by
      refine (rv_extract d L g2 (k1_off35 k ⟨2, by decide⟩) (k1_off35_inb k ⟨2, by decide⟩) (by decide) 0 (by decide) (by decide) (by decide)).trans ?_
      exact rv_word d L fl (wL L).val (2 * t1.val) 0 (2 * k.val + 1) 32 (by decide) (by omega) (by decide) g2 hV0 _
        (by rw [k1_off35_eq k ⟨2, by decide⟩]; show 128 * k.val + 16 * 2 + 64 + 0 = 1024 * 0 + 64 * (2 * k.val + 1) + 32; omega) _
    have hwB_33 : pair0_lt.sl.v1703_5 d L k g2 = Spec.tcol (blkWord fl (wL L).val (2 * t1.val) (64 * (2 * k.val + 1) + 33)) := by
      refine (rv_extract d L g2 (k1_off35 k ⟨2, by decide⟩) (k1_off35_inb k ⟨2, by decide⟩) (by decide) 1 (by decide) (by decide) (by decide)).trans ?_
      exact rv_word d L fl (wL L).val (2 * t1.val) 0 (2 * k.val + 1) 33 (by decide) (by omega) (by decide) g2 hV0 _
        (by rw [k1_off35_eq k ⟨2, by decide⟩]; show 128 * k.val + 16 * 2 + 64 + 1 = 1024 * 0 + 64 * (2 * k.val + 1) + 33; omega) _
    have hwB_34 : pair0_lt.sl.v1739_5 d L k g2 = Spec.tcol (blkWord fl (wL L).val (2 * t1.val) (64 * (2 * k.val + 1) + 34)) := by
      refine (rv_extract d L g2 (k1_off35 k ⟨2, by decide⟩) (k1_off35_inb k ⟨2, by decide⟩) (by decide) 2 (by decide) (by decide) (by decide)).trans ?_
      exact rv_word d L fl (wL L).val (2 * t1.val) 0 (2 * k.val + 1) 34 (by decide) (by omega) (by decide) g2 hV0 _
        (by rw [k1_off35_eq k ⟨2, by decide⟩]; show 128 * k.val + 16 * 2 + 64 + 2 = 1024 * 0 + 64 * (2 * k.val + 1) + 34; omega) _
    have hwB_35 : pair0_lt.sl.v1775_5 d L k g2 = Spec.tcol (blkWord fl (wL L).val (2 * t1.val) (64 * (2 * k.val + 1) + 35)) := by
      refine (rv_extract d L g2 (k1_off35 k ⟨2, by decide⟩) (k1_off35_inb k ⟨2, by decide⟩) (by decide) 3 (by decide) (by decide) (by decide)).trans ?_
      exact rv_word d L fl (wL L).val (2 * t1.val) 0 (2 * k.val + 1) 35 (by decide) (by omega) (by decide) g2 hV0 _
        (by rw [k1_off35_eq k ⟨2, by decide⟩]; show 128 * k.val + 16 * 2 + 64 + 3 = 1024 * 0 + 64 * (2 * k.val + 1) + 35; omega) _
    have hwB_36 : pair0_lt.sl.v1811_5 d L k g2 = Spec.tcol (blkWord fl (wL L).val (2 * t1.val) (64 * (2 * k.val + 1) + 36)) := by
      refine (rv_extract d L g2 (k1_off35 k ⟨2, by decide⟩) (k1_off35_inb k ⟨2, by decide⟩) (by decide) 4 (by decide) (by decide) (by decide)).trans ?_
      exact rv_word d L fl (wL L).val (2 * t1.val) 0 (2 * k.val + 1) 36 (by decide) (by omega) (by decide) g2 hV0 _
        (by rw [k1_off35_eq k ⟨2, by decide⟩]; show 128 * k.val + 16 * 2 + 64 + 4 = 1024 * 0 + 64 * (2 * k.val + 1) + 36; omega) _
    have hwB_37 : pair0_lt.sl.v1847_5 d L k g2 = Spec.tcol (blkWord fl (wL L).val (2 * t1.val) (64 * (2 * k.val + 1) + 37)) := by
      refine (rv_extract d L g2 (k1_off35 k ⟨2, by decide⟩) (k1_off35_inb k ⟨2, by decide⟩) (by decide) 5 (by decide) (by decide) (by decide)).trans ?_
      exact rv_word d L fl (wL L).val (2 * t1.val) 0 (2 * k.val + 1) 37 (by decide) (by omega) (by decide) g2 hV0 _
        (by rw [k1_off35_eq k ⟨2, by decide⟩]; show 128 * k.val + 16 * 2 + 64 + 5 = 1024 * 0 + 64 * (2 * k.val + 1) + 37; omega) _
    have hwB_38 : pair0_lt.sl.v1883_5 d L k g2 = Spec.tcol (blkWord fl (wL L).val (2 * t1.val) (64 * (2 * k.val + 1) + 38)) := by
      refine (rv_extract d L g2 (k1_off35 k ⟨2, by decide⟩) (k1_off35_inb k ⟨2, by decide⟩) (by decide) 6 (by decide) (by decide) (by decide)).trans ?_
      exact rv_word d L fl (wL L).val (2 * t1.val) 0 (2 * k.val + 1) 38 (by decide) (by omega) (by decide) g2 hV0 _
        (by rw [k1_off35_eq k ⟨2, by decide⟩]; show 128 * k.val + 16 * 2 + 64 + 6 = 1024 * 0 + 64 * (2 * k.val + 1) + 38; omega) _
    have hwB_39 : pair0_lt.sl.v1919_5 d L k g2 = Spec.tcol (blkWord fl (wL L).val (2 * t1.val) (64 * (2 * k.val + 1) + 39)) := by
      refine (rv_extract d L g2 (k1_off35 k ⟨2, by decide⟩) (k1_off35_inb k ⟨2, by decide⟩) (by decide) 7 (by decide) (by decide) (by decide)).trans ?_
      exact rv_word d L fl (wL L).val (2 * t1.val) 0 (2 * k.val + 1) 39 (by decide) (by omega) (by decide) g2 hV0 _
        (by rw [k1_off35_eq k ⟨2, by decide⟩]; show 128 * k.val + 16 * 2 + 64 + 7 = 1024 * 0 + 64 * (2 * k.val + 1) + 39; omega) _
    have hwB_40 : pair0_lt.sl.v1955_5 d L k g2 = Spec.tcol (blkWord fl (wL L).val (2 * t1.val) (64 * (2 * k.val + 1) + 40)) := by
      refine (rv_extract d L g2 (k1_off35 k ⟨2, by decide⟩) (k1_off35_inb k ⟨2, by decide⟩) (by decide) 8 (by decide) (by decide) (by decide)).trans ?_
      exact rv_word d L fl (wL L).val (2 * t1.val) 0 (2 * k.val + 1) 40 (by decide) (by omega) (by decide) g2 hV0 _
        (by rw [k1_off35_eq k ⟨2, by decide⟩]; show 128 * k.val + 16 * 2 + 64 + 8 = 1024 * 0 + 64 * (2 * k.val + 1) + 40; omega) _
    have hwB_41 : pair0_lt.sl.v1991_5 d L k g2 = Spec.tcol (blkWord fl (wL L).val (2 * t1.val) (64 * (2 * k.val + 1) + 41)) := by
      refine (rv_extract d L g2 (k1_off35 k ⟨2, by decide⟩) (k1_off35_inb k ⟨2, by decide⟩) (by decide) 9 (by decide) (by decide) (by decide)).trans ?_
      exact rv_word d L fl (wL L).val (2 * t1.val) 0 (2 * k.val + 1) 41 (by decide) (by omega) (by decide) g2 hV0 _
        (by rw [k1_off35_eq k ⟨2, by decide⟩]; show 128 * k.val + 16 * 2 + 64 + 9 = 1024 * 0 + 64 * (2 * k.val + 1) + 41; omega) _
    have hwB_42 : pair0_lt.sl.v2027_5 d L k g2 = Spec.tcol (blkWord fl (wL L).val (2 * t1.val) (64 * (2 * k.val + 1) + 42)) := by
      refine (rv_extract d L g2 (k1_off35 k ⟨2, by decide⟩) (k1_off35_inb k ⟨2, by decide⟩) (by decide) 10 (by decide) (by decide) (by decide)).trans ?_
      exact rv_word d L fl (wL L).val (2 * t1.val) 0 (2 * k.val + 1) 42 (by decide) (by omega) (by decide) g2 hV0 _
        (by rw [k1_off35_eq k ⟨2, by decide⟩]; show 128 * k.val + 16 * 2 + 64 + 10 = 1024 * 0 + 64 * (2 * k.val + 1) + 42; omega) _
    have hwB_43 : pair0_lt.sl.v2063_5 d L k g2 = Spec.tcol (blkWord fl (wL L).val (2 * t1.val) (64 * (2 * k.val + 1) + 43)) := by
      refine (rv_extract d L g2 (k1_off35 k ⟨2, by decide⟩) (k1_off35_inb k ⟨2, by decide⟩) (by decide) 11 (by decide) (by decide) (by decide)).trans ?_
      exact rv_word d L fl (wL L).val (2 * t1.val) 0 (2 * k.val + 1) 43 (by decide) (by omega) (by decide) g2 hV0 _
        (by rw [k1_off35_eq k ⟨2, by decide⟩]; show 128 * k.val + 16 * 2 + 64 + 11 = 1024 * 0 + 64 * (2 * k.val + 1) + 43; omega) _
    have hwB_44 : pair0_lt.sl.v2099_5 d L k g2 = Spec.tcol (blkWord fl (wL L).val (2 * t1.val) (64 * (2 * k.val + 1) + 44)) := by
      refine (rv_extract d L g2 (k1_off35 k ⟨2, by decide⟩) (k1_off35_inb k ⟨2, by decide⟩) (by decide) 12 (by decide) (by decide) (by decide)).trans ?_
      exact rv_word d L fl (wL L).val (2 * t1.val) 0 (2 * k.val + 1) 44 (by decide) (by omega) (by decide) g2 hV0 _
        (by rw [k1_off35_eq k ⟨2, by decide⟩]; show 128 * k.val + 16 * 2 + 64 + 12 = 1024 * 0 + 64 * (2 * k.val + 1) + 44; omega) _
    have hwB_45 : pair0_lt.sl.v2135_5 d L k g2 = Spec.tcol (blkWord fl (wL L).val (2 * t1.val) (64 * (2 * k.val + 1) + 45)) := by
      refine (rv_extract d L g2 (k1_off35 k ⟨2, by decide⟩) (k1_off35_inb k ⟨2, by decide⟩) (by decide) 13 (by decide) (by decide) (by decide)).trans ?_
      exact rv_word d L fl (wL L).val (2 * t1.val) 0 (2 * k.val + 1) 45 (by decide) (by omega) (by decide) g2 hV0 _
        (by rw [k1_off35_eq k ⟨2, by decide⟩]; show 128 * k.val + 16 * 2 + 64 + 13 = 1024 * 0 + 64 * (2 * k.val + 1) + 45; omega) _
    have hwB_46 : pair0_lt.sl.v2171_5 d L k g2 = Spec.tcol (blkWord fl (wL L).val (2 * t1.val) (64 * (2 * k.val + 1) + 46)) := by
      refine (rv_extract d L g2 (k1_off35 k ⟨2, by decide⟩) (k1_off35_inb k ⟨2, by decide⟩) (by decide) 14 (by decide) (by decide) (by decide)).trans ?_
      exact rv_word d L fl (wL L).val (2 * t1.val) 0 (2 * k.val + 1) 46 (by decide) (by omega) (by decide) g2 hV0 _
        (by rw [k1_off35_eq k ⟨2, by decide⟩]; show 128 * k.val + 16 * 2 + 64 + 14 = 1024 * 0 + 64 * (2 * k.val + 1) + 46; omega) _
    have hwB_47 : pair0_lt.sl.v2207_5 d L k g2 = Spec.tcol (blkWord fl (wL L).val (2 * t1.val) (64 * (2 * k.val + 1) + 47)) := by
      refine (rv_extract d L g2 (k1_off35 k ⟨2, by decide⟩) (k1_off35_inb k ⟨2, by decide⟩) (by decide) 15 (by decide) (by decide) (by decide)).trans ?_
      exact rv_word d L fl (wL L).val (2 * t1.val) 0 (2 * k.val + 1) 47 (by decide) (by omega) (by decide) g2 hV0 _
        (by rw [k1_off35_eq k ⟨2, by decide⟩]; show 128 * k.val + 16 * 2 + 64 + 15 = 1024 * 0 + 64 * (2 * k.val + 1) + 47; omega) _
    have hwB_48 : pair0_lt.sl.v1572 d L k g2 = Spec.tcol (blkWord fl (wL L).val (2 * t1.val) (64 * (2 * k.val + 1) + 48)) := by
      refine (rv_extract d L g2 (k1_off52 k) (k1_off52_inb k) (by decide) 0 (by decide) (by decide) (by decide)).trans ?_
      exact rv_word d L fl (wL L).val (2 * t1.val) 0 (2 * k.val + 1) 48 (by decide) (by omega) (by decide) g2 hV0 _
        (by rw [k1_off52_eq k]; show 128 * k.val + 112 + 0 = 1024 * 0 + 64 * (2 * k.val + 1) + 48; omega) _
    have hwB_49 : pair0_lt.sl.v1606 d L k g2 = Spec.tcol (blkWord fl (wL L).val (2 * t1.val) (64 * (2 * k.val + 1) + 49)) := by
      refine (rv_extract d L g2 (k1_off52 k) (k1_off52_inb k) (by decide) 1 (by decide) (by decide) (by decide)).trans ?_
      exact rv_word d L fl (wL L).val (2 * t1.val) 0 (2 * k.val + 1) 49 (by decide) (by omega) (by decide) g2 hV0 _
        (by rw [k1_off52_eq k]; show 128 * k.val + 112 + 1 = 1024 * 0 + 64 * (2 * k.val + 1) + 49; omega) _
    have sB0_0 : addf (AccMath.accVec (rowF fl tab (wL L).val (2 * t1.val) (2 * k.val + 1)) (offF fl (wL L).val (2 * t1.val) (2 * k.val + 1)) 0 0) (shapeCast S16 (pair0_lt.sl.v1673_3 d L tab k r g1 g2 hR hin h4) hc16) = AccMath.accVec (rowF fl tab (wL L).val (2 * t1.val) (2 * k.val + 1)) (offF fl (wL L).val (2 * t1.val) (2 * k.val + 1)) 0 1 :=
      acc_step d L fl tab (wL L).val (2 * t1.val) (2 * k.val + 1) 1 _ (hRB _) ⟨0, by decide⟩ ⟨0, by decide⟩ _ rfl _ hwB_0 _ (k1_off36_form ⟨0, by decide⟩ _ _) _ hc16
    have sB0_1 : addf (AccMath.accVec (rowF fl tab (wL L).val (2 * t1.val) (2 * k.val + 1)) (offF fl (wL L).val (2 * t1.val) (2 * k.val + 1)) 0 1) (shapeCast S16 (pair0_lt.sl.v1709_3 d L tab k r g1 g2 hR hin h4) hc16) = AccMath.accVec (rowF fl tab (wL L).val (2 * t1.val) (2 * k.val + 1)) (offF fl (wL L).val (2 * t1.val) (2 * k.val + 1)) 0 2 :=
      acc_step d L fl tab (wL L).val (2 * t1.val) (2 * k.val + 1) 1 _ (hRB _) ⟨1, by decide⟩ ⟨0, by decide⟩ _ rfl _ hwB_1 _ (k1_off37_form ⟨0, by decide⟩ _ _) _ hc16
    have sB0_2 : addf (AccMath.accVec (rowF fl tab (wL L).val (2 * t1.val) (2 * k.val + 1)) (offF fl (wL L).val (2 * t1.val) (2 * k.val + 1)) 0 2) (shapeCast S16 (pair0_lt.sl.v1745_3 d L tab k r g1 g2 hR hin h4) hc16) = AccMath.accVec (rowF fl tab (wL L).val (2 * t1.val) (2 * k.val + 1)) (offF fl (wL L).val (2 * t1.val) (2 * k.val + 1)) 0 3 :=
      acc_step d L fl tab (wL L).val (2 * t1.val) (2 * k.val + 1) 1 _ (hRB _) ⟨2, by decide⟩ ⟨0, by decide⟩ _ rfl _ hwB_2 _ (k1_off38_form ⟨0, by decide⟩ _ _) _ hc16
    have sB0_3 : addf (AccMath.accVec (rowF fl tab (wL L).val (2 * t1.val) (2 * k.val + 1)) (offF fl (wL L).val (2 * t1.val) (2 * k.val + 1)) 0 3) (shapeCast S16 (pair0_lt.sl.v1781_3 d L tab k r g1 g2 hR hin h4) hc16) = AccMath.accVec (rowF fl tab (wL L).val (2 * t1.val) (2 * k.val + 1)) (offF fl (wL L).val (2 * t1.val) (2 * k.val + 1)) 0 4 :=
      acc_step d L fl tab (wL L).val (2 * t1.val) (2 * k.val + 1) 1 _ (hRB _) ⟨3, by decide⟩ ⟨0, by decide⟩ _ rfl _ hwB_3 _ (k1_off39_form ⟨0, by decide⟩ _ _) _ hc16
    have sB0_4 : addf (AccMath.accVec (rowF fl tab (wL L).val (2 * t1.val) (2 * k.val + 1)) (offF fl (wL L).val (2 * t1.val) (2 * k.val + 1)) 0 4) (shapeCast S16 (pair0_lt.sl.v1817_3 d L tab k r g1 g2 hR hin h4) hc16) = AccMath.accVec (rowF fl tab (wL L).val (2 * t1.val) (2 * k.val + 1)) (offF fl (wL L).val (2 * t1.val) (2 * k.val + 1)) 0 5 :=
      acc_step d L fl tab (wL L).val (2 * t1.val) (2 * k.val + 1) 1 _ (hRB _) ⟨4, by decide⟩ ⟨0, by decide⟩ _ rfl _ hwB_4 _ (k1_off40_form ⟨0, by decide⟩ _ _) _ hc16
    have sB0_5 : addf (AccMath.accVec (rowF fl tab (wL L).val (2 * t1.val) (2 * k.val + 1)) (offF fl (wL L).val (2 * t1.val) (2 * k.val + 1)) 0 5) (shapeCast S16 (pair0_lt.sl.v1853_3 d L tab k r g1 g2 hR hin h4) hc16) = AccMath.accVec (rowF fl tab (wL L).val (2 * t1.val) (2 * k.val + 1)) (offF fl (wL L).val (2 * t1.val) (2 * k.val + 1)) 0 6 :=
      acc_step d L fl tab (wL L).val (2 * t1.val) (2 * k.val + 1) 1 _ (hRB _) ⟨5, by decide⟩ ⟨0, by decide⟩ _ rfl _ hwB_5 _ (k1_off41_form ⟨0, by decide⟩ _ _) _ hc16
    have sB0_6 : addf (AccMath.accVec (rowF fl tab (wL L).val (2 * t1.val) (2 * k.val + 1)) (offF fl (wL L).val (2 * t1.val) (2 * k.val + 1)) 0 6) (shapeCast S16 (pair0_lt.sl.v1889_3 d L tab k r g1 g2 hR hin h4) hc16) = AccMath.accVec (rowF fl tab (wL L).val (2 * t1.val) (2 * k.val + 1)) (offF fl (wL L).val (2 * t1.val) (2 * k.val + 1)) 0 7 :=
      acc_step d L fl tab (wL L).val (2 * t1.val) (2 * k.val + 1) 1 _ (hRB _) ⟨6, by decide⟩ ⟨0, by decide⟩ _ rfl _ hwB_6 _ (k1_off42_form ⟨0, by decide⟩ _ _) _ hc16
    have sB0_7 : addf (AccMath.accVec (rowF fl tab (wL L).val (2 * t1.val) (2 * k.val + 1)) (offF fl (wL L).val (2 * t1.val) (2 * k.val + 1)) 0 7) (shapeCast S16 (pair0_lt.sl.v1925_3 d L tab k r g1 g2 hR hin h4) hc16) = AccMath.accVec (rowF fl tab (wL L).val (2 * t1.val) (2 * k.val + 1)) (offF fl (wL L).val (2 * t1.val) (2 * k.val + 1)) 0 8 :=
      acc_step d L fl tab (wL L).val (2 * t1.val) (2 * k.val + 1) 1 _ (hRB _) ⟨7, by decide⟩ ⟨0, by decide⟩ _ rfl _ hwB_7 _ (k1_off43_form ⟨0, by decide⟩ _ _) _ hc16
    have sB0_8 : addf (AccMath.accVec (rowF fl tab (wL L).val (2 * t1.val) (2 * k.val + 1)) (offF fl (wL L).val (2 * t1.val) (2 * k.val + 1)) 0 8) (shapeCast S16 (pair0_lt.sl.v1961_3 d L tab k r g1 g2 hR hin h4) hc16) = AccMath.accVec (rowF fl tab (wL L).val (2 * t1.val) (2 * k.val + 1)) (offF fl (wL L).val (2 * t1.val) (2 * k.val + 1)) 0 9 :=
      acc_step d L fl tab (wL L).val (2 * t1.val) (2 * k.val + 1) 1 _ (hRB _) ⟨8, by decide⟩ ⟨0, by decide⟩ _ rfl _ hwB_8 _ (k1_off44_form ⟨0, by decide⟩ _ _) _ hc16
    have sB0_9 : addf (AccMath.accVec (rowF fl tab (wL L).val (2 * t1.val) (2 * k.val + 1)) (offF fl (wL L).val (2 * t1.val) (2 * k.val + 1)) 0 9) (shapeCast S16 (pair0_lt.sl.v1997_3 d L tab k r g1 g2 hR hin h4) hc16) = AccMath.accVec (rowF fl tab (wL L).val (2 * t1.val) (2 * k.val + 1)) (offF fl (wL L).val (2 * t1.val) (2 * k.val + 1)) 0 10 :=
      acc_step d L fl tab (wL L).val (2 * t1.val) (2 * k.val + 1) 1 _ (hRB _) ⟨9, by decide⟩ ⟨0, by decide⟩ _ rfl _ hwB_9 _ (k1_off45_form ⟨0, by decide⟩ _ _) _ hc16
    have sB0_10 : addf (AccMath.accVec (rowF fl tab (wL L).val (2 * t1.val) (2 * k.val + 1)) (offF fl (wL L).val (2 * t1.val) (2 * k.val + 1)) 0 10) (shapeCast S16 (pair0_lt.sl.v2033_3 d L tab k r g1 g2 hR hin h4) hc16) = AccMath.accVec (rowF fl tab (wL L).val (2 * t1.val) (2 * k.val + 1)) (offF fl (wL L).val (2 * t1.val) (2 * k.val + 1)) 0 11 :=
      acc_step d L fl tab (wL L).val (2 * t1.val) (2 * k.val + 1) 1 _ (hRB _) ⟨10, by decide⟩ ⟨0, by decide⟩ _ rfl _ hwB_10 _ (k1_off46_form ⟨0, by decide⟩ _ _) _ hc16
    have sB0_11 : addf (AccMath.accVec (rowF fl tab (wL L).val (2 * t1.val) (2 * k.val + 1)) (offF fl (wL L).val (2 * t1.val) (2 * k.val + 1)) 0 11) (shapeCast S16 (pair0_lt.sl.v2069_3 d L tab k r g1 g2 hR hin h4) hc16) = AccMath.accVec (rowF fl tab (wL L).val (2 * t1.val) (2 * k.val + 1)) (offF fl (wL L).val (2 * t1.val) (2 * k.val + 1)) 0 12 :=
      acc_step d L fl tab (wL L).val (2 * t1.val) (2 * k.val + 1) 1 _ (hRB _) ⟨11, by decide⟩ ⟨0, by decide⟩ _ rfl _ hwB_11 _ (k1_off47_form ⟨0, by decide⟩ _ _) _ hc16
    have sB0_12 : addf (AccMath.accVec (rowF fl tab (wL L).val (2 * t1.val) (2 * k.val + 1)) (offF fl (wL L).val (2 * t1.val) (2 * k.val + 1)) 0 12) (shapeCast S16 (pair0_lt.sl.v2105_3 d L tab k r g1 g2 hR hin h4) hc16) = AccMath.accVec (rowF fl tab (wL L).val (2 * t1.val) (2 * k.val + 1)) (offF fl (wL L).val (2 * t1.val) (2 * k.val + 1)) 0 13 :=
      acc_step d L fl tab (wL L).val (2 * t1.val) (2 * k.val + 1) 1 _ (hRB _) ⟨12, by decide⟩ ⟨0, by decide⟩ _ rfl _ hwB_12 _ (k1_off48_form ⟨0, by decide⟩ _ _) _ hc16
    have sB0_13 : addf (AccMath.accVec (rowF fl tab (wL L).val (2 * t1.val) (2 * k.val + 1)) (offF fl (wL L).val (2 * t1.val) (2 * k.val + 1)) 0 13) (shapeCast S16 (pair0_lt.sl.v2141_3 d L tab k r g1 g2 hR hin h4) hc16) = AccMath.accVec (rowF fl tab (wL L).val (2 * t1.val) (2 * k.val + 1)) (offF fl (wL L).val (2 * t1.val) (2 * k.val + 1)) 0 14 :=
      acc_step d L fl tab (wL L).val (2 * t1.val) (2 * k.val + 1) 1 _ (hRB _) ⟨13, by decide⟩ ⟨0, by decide⟩ _ rfl _ hwB_13 _ (k1_off49_form ⟨0, by decide⟩ _ _) _ hc16
    have sB0_14 : addf (AccMath.accVec (rowF fl tab (wL L).val (2 * t1.val) (2 * k.val + 1)) (offF fl (wL L).val (2 * t1.val) (2 * k.val + 1)) 0 14) (shapeCast S16 (pair0_lt.sl.v2177_3 d L tab k r g1 g2 hR hin h4) hc16) = AccMath.accVec (rowF fl tab (wL L).val (2 * t1.val) (2 * k.val + 1)) (offF fl (wL L).val (2 * t1.val) (2 * k.val + 1)) 0 15 :=
      acc_step d L fl tab (wL L).val (2 * t1.val) (2 * k.val + 1) 1 _ (hRB _) ⟨14, by decide⟩ ⟨0, by decide⟩ _ rfl _ hwB_14 _ (k1_off50_form ⟨0, by decide⟩ _ _) _ hc16
    have sB0_15 : addf (AccMath.accVec (rowF fl tab (wL L).val (2 * t1.val) (2 * k.val + 1)) (offF fl (wL L).val (2 * t1.val) (2 * k.val + 1)) 0 15) (shapeCast S16 (pair0_lt.sl.v2213_3 d L tab k r g1 g2 hR hin h4) hc16) = AccMath.accVec (rowF fl tab (wL L).val (2 * t1.val) (2 * k.val + 1)) (offF fl (wL L).val (2 * t1.val) (2 * k.val + 1)) 0 16 :=
      acc_step d L fl tab (wL L).val (2 * t1.val) (2 * k.val + 1) 1 _ (hRB _) ⟨15, by decide⟩ ⟨0, by decide⟩ _ rfl _ hwB_15 _ (k1_off51_form ⟨0, by decide⟩ _ _) _ hc16
    have sB0_16 : addf (AccMath.accVec (rowF fl tab (wL L).val (2 * t1.val) (2 * k.val + 1)) (offF fl (wL L).val (2 * t1.val) (2 * k.val + 1)) 0 16) (shapeCast S16 (pair0_lt.sl.v1673_4 d L tab k r g1 g2 hR hin h4) hc16) = AccMath.accVec (rowF fl tab (wL L).val (2 * t1.val) (2 * k.val + 1)) (offF fl (wL L).val (2 * t1.val) (2 * k.val + 1)) 0 17 :=
      acc_step d L fl tab (wL L).val (2 * t1.val) (2 * k.val + 1) 1 _ (hRB _) ⟨16, by decide⟩ ⟨0, by decide⟩ _ rfl _ hwB_16 _ (k1_off36_form ⟨1, by decide⟩ _ _) _ hc16
    have sB0_17 : addf (AccMath.accVec (rowF fl tab (wL L).val (2 * t1.val) (2 * k.val + 1)) (offF fl (wL L).val (2 * t1.val) (2 * k.val + 1)) 0 17) (shapeCast S16 (pair0_lt.sl.v1709_4 d L tab k r g1 g2 hR hin h4) hc16) = AccMath.accVec (rowF fl tab (wL L).val (2 * t1.val) (2 * k.val + 1)) (offF fl (wL L).val (2 * t1.val) (2 * k.val + 1)) 0 18 :=
      acc_step d L fl tab (wL L).val (2 * t1.val) (2 * k.val + 1) 1 _ (hRB _) ⟨17, by decide⟩ ⟨0, by decide⟩ _ rfl _ hwB_17 _ (k1_off37_form ⟨1, by decide⟩ _ _) _ hc16
    have sB0_18 : addf (AccMath.accVec (rowF fl tab (wL L).val (2 * t1.val) (2 * k.val + 1)) (offF fl (wL L).val (2 * t1.val) (2 * k.val + 1)) 0 18) (shapeCast S16 (pair0_lt.sl.v1745_4 d L tab k r g1 g2 hR hin h4) hc16) = AccMath.accVec (rowF fl tab (wL L).val (2 * t1.val) (2 * k.val + 1)) (offF fl (wL L).val (2 * t1.val) (2 * k.val + 1)) 0 19 :=
      acc_step d L fl tab (wL L).val (2 * t1.val) (2 * k.val + 1) 1 _ (hRB _) ⟨18, by decide⟩ ⟨0, by decide⟩ _ rfl _ hwB_18 _ (k1_off38_form ⟨1, by decide⟩ _ _) _ hc16
    have sB0_19 : addf (AccMath.accVec (rowF fl tab (wL L).val (2 * t1.val) (2 * k.val + 1)) (offF fl (wL L).val (2 * t1.val) (2 * k.val + 1)) 0 19) (shapeCast S16 (pair0_lt.sl.v1781_4 d L tab k r g1 g2 hR hin h4) hc16) = AccMath.accVec (rowF fl tab (wL L).val (2 * t1.val) (2 * k.val + 1)) (offF fl (wL L).val (2 * t1.val) (2 * k.val + 1)) 0 20 :=
      acc_step d L fl tab (wL L).val (2 * t1.val) (2 * k.val + 1) 1 _ (hRB _) ⟨19, by decide⟩ ⟨0, by decide⟩ _ rfl _ hwB_19 _ (k1_off39_form ⟨1, by decide⟩ _ _) _ hc16
    have sB0_20 : addf (AccMath.accVec (rowF fl tab (wL L).val (2 * t1.val) (2 * k.val + 1)) (offF fl (wL L).val (2 * t1.val) (2 * k.val + 1)) 0 20) (shapeCast S16 (pair0_lt.sl.v1817_4 d L tab k r g1 g2 hR hin h4) hc16) = AccMath.accVec (rowF fl tab (wL L).val (2 * t1.val) (2 * k.val + 1)) (offF fl (wL L).val (2 * t1.val) (2 * k.val + 1)) 0 21 :=
      acc_step d L fl tab (wL L).val (2 * t1.val) (2 * k.val + 1) 1 _ (hRB _) ⟨20, by decide⟩ ⟨0, by decide⟩ _ rfl _ hwB_20 _ (k1_off40_form ⟨1, by decide⟩ _ _) _ hc16
    have sB0_21 : addf (AccMath.accVec (rowF fl tab (wL L).val (2 * t1.val) (2 * k.val + 1)) (offF fl (wL L).val (2 * t1.val) (2 * k.val + 1)) 0 21) (shapeCast S16 (pair0_lt.sl.v1853_4 d L tab k r g1 g2 hR hin h4) hc16) = AccMath.accVec (rowF fl tab (wL L).val (2 * t1.val) (2 * k.val + 1)) (offF fl (wL L).val (2 * t1.val) (2 * k.val + 1)) 0 22 :=
      acc_step d L fl tab (wL L).val (2 * t1.val) (2 * k.val + 1) 1 _ (hRB _) ⟨21, by decide⟩ ⟨0, by decide⟩ _ rfl _ hwB_21 _ (k1_off41_form ⟨1, by decide⟩ _ _) _ hc16
    have sB0_22 : addf (AccMath.accVec (rowF fl tab (wL L).val (2 * t1.val) (2 * k.val + 1)) (offF fl (wL L).val (2 * t1.val) (2 * k.val + 1)) 0 22) (shapeCast S16 (pair0_lt.sl.v1889_4 d L tab k r g1 g2 hR hin h4) hc16) = AccMath.accVec (rowF fl tab (wL L).val (2 * t1.val) (2 * k.val + 1)) (offF fl (wL L).val (2 * t1.val) (2 * k.val + 1)) 0 23 :=
      acc_step d L fl tab (wL L).val (2 * t1.val) (2 * k.val + 1) 1 _ (hRB _) ⟨22, by decide⟩ ⟨0, by decide⟩ _ rfl _ hwB_22 _ (k1_off42_form ⟨1, by decide⟩ _ _) _ hc16
    have sB0_23 : addf (AccMath.accVec (rowF fl tab (wL L).val (2 * t1.val) (2 * k.val + 1)) (offF fl (wL L).val (2 * t1.val) (2 * k.val + 1)) 0 23) (shapeCast S16 (pair0_lt.sl.v1925_4 d L tab k r g1 g2 hR hin h4) hc16) = AccMath.accVec (rowF fl tab (wL L).val (2 * t1.val) (2 * k.val + 1)) (offF fl (wL L).val (2 * t1.val) (2 * k.val + 1)) 0 24 :=
      acc_step d L fl tab (wL L).val (2 * t1.val) (2 * k.val + 1) 1 _ (hRB _) ⟨23, by decide⟩ ⟨0, by decide⟩ _ rfl _ hwB_23 _ (k1_off43_form ⟨1, by decide⟩ _ _) _ hc16
    have sB0_24 : addf (AccMath.accVec (rowF fl tab (wL L).val (2 * t1.val) (2 * k.val + 1)) (offF fl (wL L).val (2 * t1.val) (2 * k.val + 1)) 0 24) (shapeCast S16 (pair0_lt.sl.v1961_4 d L tab k r g1 g2 hR hin h4) hc16) = AccMath.accVec (rowF fl tab (wL L).val (2 * t1.val) (2 * k.val + 1)) (offF fl (wL L).val (2 * t1.val) (2 * k.val + 1)) 0 25 :=
      acc_step d L fl tab (wL L).val (2 * t1.val) (2 * k.val + 1) 1 _ (hRB _) ⟨24, by decide⟩ ⟨0, by decide⟩ _ rfl _ hwB_24 _ (k1_off44_form ⟨1, by decide⟩ _ _) _ hc16
    have sB0_25 : addf (AccMath.accVec (rowF fl tab (wL L).val (2 * t1.val) (2 * k.val + 1)) (offF fl (wL L).val (2 * t1.val) (2 * k.val + 1)) 0 25) (shapeCast S16 (pair0_lt.sl.v1997_4 d L tab k r g1 g2 hR hin h4) hc16) = AccMath.accVec (rowF fl tab (wL L).val (2 * t1.val) (2 * k.val + 1)) (offF fl (wL L).val (2 * t1.val) (2 * k.val + 1)) 0 26 :=
      acc_step d L fl tab (wL L).val (2 * t1.val) (2 * k.val + 1) 1 _ (hRB _) ⟨25, by decide⟩ ⟨0, by decide⟩ _ rfl _ hwB_25 _ (k1_off45_form ⟨1, by decide⟩ _ _) _ hc16
    have sB0_26 : addf (AccMath.accVec (rowF fl tab (wL L).val (2 * t1.val) (2 * k.val + 1)) (offF fl (wL L).val (2 * t1.val) (2 * k.val + 1)) 0 26) (shapeCast S16 (pair0_lt.sl.v2033_4 d L tab k r g1 g2 hR hin h4) hc16) = AccMath.accVec (rowF fl tab (wL L).val (2 * t1.val) (2 * k.val + 1)) (offF fl (wL L).val (2 * t1.val) (2 * k.val + 1)) 0 27 :=
      acc_step d L fl tab (wL L).val (2 * t1.val) (2 * k.val + 1) 1 _ (hRB _) ⟨26, by decide⟩ ⟨0, by decide⟩ _ rfl _ hwB_26 _ (k1_off46_form ⟨1, by decide⟩ _ _) _ hc16
    have sB0_27 : addf (AccMath.accVec (rowF fl tab (wL L).val (2 * t1.val) (2 * k.val + 1)) (offF fl (wL L).val (2 * t1.val) (2 * k.val + 1)) 0 27) (shapeCast S16 (pair0_lt.sl.v2069_4 d L tab k r g1 g2 hR hin h4) hc16) = AccMath.accVec (rowF fl tab (wL L).val (2 * t1.val) (2 * k.val + 1)) (offF fl (wL L).val (2 * t1.val) (2 * k.val + 1)) 0 28 :=
      acc_step d L fl tab (wL L).val (2 * t1.val) (2 * k.val + 1) 1 _ (hRB _) ⟨27, by decide⟩ ⟨0, by decide⟩ _ rfl _ hwB_27 _ (k1_off47_form ⟨1, by decide⟩ _ _) _ hc16
    have sB0_28 : addf (AccMath.accVec (rowF fl tab (wL L).val (2 * t1.val) (2 * k.val + 1)) (offF fl (wL L).val (2 * t1.val) (2 * k.val + 1)) 0 28) (shapeCast S16 (pair0_lt.sl.v2105_4 d L tab k r g1 g2 hR hin h4) hc16) = AccMath.accVec (rowF fl tab (wL L).val (2 * t1.val) (2 * k.val + 1)) (offF fl (wL L).val (2 * t1.val) (2 * k.val + 1)) 0 29 :=
      acc_step d L fl tab (wL L).val (2 * t1.val) (2 * k.val + 1) 1 _ (hRB _) ⟨28, by decide⟩ ⟨0, by decide⟩ _ rfl _ hwB_28 _ (k1_off48_form ⟨1, by decide⟩ _ _) _ hc16
    have sB0_29 : addf (AccMath.accVec (rowF fl tab (wL L).val (2 * t1.val) (2 * k.val + 1)) (offF fl (wL L).val (2 * t1.val) (2 * k.val + 1)) 0 29) (shapeCast S16 (pair0_lt.sl.v2141_4 d L tab k r g1 g2 hR hin h4) hc16) = AccMath.accVec (rowF fl tab (wL L).val (2 * t1.val) (2 * k.val + 1)) (offF fl (wL L).val (2 * t1.val) (2 * k.val + 1)) 0 30 :=
      acc_step d L fl tab (wL L).val (2 * t1.val) (2 * k.val + 1) 1 _ (hRB _) ⟨29, by decide⟩ ⟨0, by decide⟩ _ rfl _ hwB_29 _ (k1_off49_form ⟨1, by decide⟩ _ _) _ hc16
    have sB0_30 : addf (AccMath.accVec (rowF fl tab (wL L).val (2 * t1.val) (2 * k.val + 1)) (offF fl (wL L).val (2 * t1.val) (2 * k.val + 1)) 0 30) (shapeCast S16 (pair0_lt.sl.v2177_4 d L tab k r g1 g2 hR hin h4) hc16) = AccMath.accVec (rowF fl tab (wL L).val (2 * t1.val) (2 * k.val + 1)) (offF fl (wL L).val (2 * t1.val) (2 * k.val + 1)) 0 31 :=
      acc_step d L fl tab (wL L).val (2 * t1.val) (2 * k.val + 1) 1 _ (hRB _) ⟨30, by decide⟩ ⟨0, by decide⟩ _ rfl _ hwB_30 _ (k1_off50_form ⟨1, by decide⟩ _ _) _ hc16
    have sB0_31 : addf (AccMath.accVec (rowF fl tab (wL L).val (2 * t1.val) (2 * k.val + 1)) (offF fl (wL L).val (2 * t1.val) (2 * k.val + 1)) 0 31) (shapeCast S16 (pair0_lt.sl.v2213_4 d L tab k r g1 g2 hR hin h4) hc16) = AccMath.accVec (rowF fl tab (wL L).val (2 * t1.val) (2 * k.val + 1)) (offF fl (wL L).val (2 * t1.val) (2 * k.val + 1)) 0 32 :=
      acc_step d L fl tab (wL L).val (2 * t1.val) (2 * k.val + 1) 1 _ (hRB _) ⟨31, by decide⟩ ⟨0, by decide⟩ _ rfl _ hwB_31 _ (k1_off51_form ⟨1, by decide⟩ _ _) _ hc16
    have sB0_32 : addf (AccMath.accVec (rowF fl tab (wL L).val (2 * t1.val) (2 * k.val + 1)) (offF fl (wL L).val (2 * t1.val) (2 * k.val + 1)) 0 32) (shapeCast S16 (pair0_lt.sl.v1673_5 d L tab k r g1 g2 hR hin h4) hc16) = AccMath.accVec (rowF fl tab (wL L).val (2 * t1.val) (2 * k.val + 1)) (offF fl (wL L).val (2 * t1.val) (2 * k.val + 1)) 0 33 :=
      acc_step d L fl tab (wL L).val (2 * t1.val) (2 * k.val + 1) 1 _ (hRB _) ⟨32, by decide⟩ ⟨0, by decide⟩ _ rfl _ hwB_32 _ (k1_off36_form ⟨2, by decide⟩ _ _) _ hc16
    have sB0_33 : addf (AccMath.accVec (rowF fl tab (wL L).val (2 * t1.val) (2 * k.val + 1)) (offF fl (wL L).val (2 * t1.val) (2 * k.val + 1)) 0 33) (shapeCast S16 (pair0_lt.sl.v1709_5 d L tab k r g1 g2 hR hin h4) hc16) = AccMath.accVec (rowF fl tab (wL L).val (2 * t1.val) (2 * k.val + 1)) (offF fl (wL L).val (2 * t1.val) (2 * k.val + 1)) 0 34 :=
      acc_step d L fl tab (wL L).val (2 * t1.val) (2 * k.val + 1) 1 _ (hRB _) ⟨33, by decide⟩ ⟨0, by decide⟩ _ rfl _ hwB_33 _ (k1_off37_form ⟨2, by decide⟩ _ _) _ hc16
    have sB0_34 : addf (AccMath.accVec (rowF fl tab (wL L).val (2 * t1.val) (2 * k.val + 1)) (offF fl (wL L).val (2 * t1.val) (2 * k.val + 1)) 0 34) (shapeCast S16 (pair0_lt.sl.v1745_5 d L tab k r g1 g2 hR hin h4) hc16) = AccMath.accVec (rowF fl tab (wL L).val (2 * t1.val) (2 * k.val + 1)) (offF fl (wL L).val (2 * t1.val) (2 * k.val + 1)) 0 35 :=
      acc_step d L fl tab (wL L).val (2 * t1.val) (2 * k.val + 1) 1 _ (hRB _) ⟨34, by decide⟩ ⟨0, by decide⟩ _ rfl _ hwB_34 _ (k1_off38_form ⟨2, by decide⟩ _ _) _ hc16
    have sB0_35 : addf (AccMath.accVec (rowF fl tab (wL L).val (2 * t1.val) (2 * k.val + 1)) (offF fl (wL L).val (2 * t1.val) (2 * k.val + 1)) 0 35) (shapeCast S16 (pair0_lt.sl.v1781_5 d L tab k r g1 g2 hR hin h4) hc16) = AccMath.accVec (rowF fl tab (wL L).val (2 * t1.val) (2 * k.val + 1)) (offF fl (wL L).val (2 * t1.val) (2 * k.val + 1)) 0 36 :=
      acc_step d L fl tab (wL L).val (2 * t1.val) (2 * k.val + 1) 1 _ (hRB _) ⟨35, by decide⟩ ⟨0, by decide⟩ _ rfl _ hwB_35 _ (k1_off39_form ⟨2, by decide⟩ _ _) _ hc16
    have sB0_36 : addf (AccMath.accVec (rowF fl tab (wL L).val (2 * t1.val) (2 * k.val + 1)) (offF fl (wL L).val (2 * t1.val) (2 * k.val + 1)) 0 36) (shapeCast S16 (pair0_lt.sl.v1817_5 d L tab k r g1 g2 hR hin h4) hc16) = AccMath.accVec (rowF fl tab (wL L).val (2 * t1.val) (2 * k.val + 1)) (offF fl (wL L).val (2 * t1.val) (2 * k.val + 1)) 0 37 :=
      acc_step d L fl tab (wL L).val (2 * t1.val) (2 * k.val + 1) 1 _ (hRB _) ⟨36, by decide⟩ ⟨0, by decide⟩ _ rfl _ hwB_36 _ (k1_off40_form ⟨2, by decide⟩ _ _) _ hc16
    have sB0_37 : addf (AccMath.accVec (rowF fl tab (wL L).val (2 * t1.val) (2 * k.val + 1)) (offF fl (wL L).val (2 * t1.val) (2 * k.val + 1)) 0 37) (shapeCast S16 (pair0_lt.sl.v1853_5 d L tab k r g1 g2 hR hin h4) hc16) = AccMath.accVec (rowF fl tab (wL L).val (2 * t1.val) (2 * k.val + 1)) (offF fl (wL L).val (2 * t1.val) (2 * k.val + 1)) 0 38 :=
      acc_step d L fl tab (wL L).val (2 * t1.val) (2 * k.val + 1) 1 _ (hRB _) ⟨37, by decide⟩ ⟨0, by decide⟩ _ rfl _ hwB_37 _ (k1_off41_form ⟨2, by decide⟩ _ _) _ hc16
    have sB0_38 : addf (AccMath.accVec (rowF fl tab (wL L).val (2 * t1.val) (2 * k.val + 1)) (offF fl (wL L).val (2 * t1.val) (2 * k.val + 1)) 0 38) (shapeCast S16 (pair0_lt.sl.v1889_5 d L tab k r g1 g2 hR hin h4) hc16) = AccMath.accVec (rowF fl tab (wL L).val (2 * t1.val) (2 * k.val + 1)) (offF fl (wL L).val (2 * t1.val) (2 * k.val + 1)) 0 39 :=
      acc_step d L fl tab (wL L).val (2 * t1.val) (2 * k.val + 1) 1 _ (hRB _) ⟨38, by decide⟩ ⟨0, by decide⟩ _ rfl _ hwB_38 _ (k1_off42_form ⟨2, by decide⟩ _ _) _ hc16
    have sB0_39 : addf (AccMath.accVec (rowF fl tab (wL L).val (2 * t1.val) (2 * k.val + 1)) (offF fl (wL L).val (2 * t1.val) (2 * k.val + 1)) 0 39) (shapeCast S16 (pair0_lt.sl.v1925_5 d L tab k r g1 g2 hR hin h4) hc16) = AccMath.accVec (rowF fl tab (wL L).val (2 * t1.val) (2 * k.val + 1)) (offF fl (wL L).val (2 * t1.val) (2 * k.val + 1)) 0 40 :=
      acc_step d L fl tab (wL L).val (2 * t1.val) (2 * k.val + 1) 1 _ (hRB _) ⟨39, by decide⟩ ⟨0, by decide⟩ _ rfl _ hwB_39 _ (k1_off43_form ⟨2, by decide⟩ _ _) _ hc16
    have sB0_40 : addf (AccMath.accVec (rowF fl tab (wL L).val (2 * t1.val) (2 * k.val + 1)) (offF fl (wL L).val (2 * t1.val) (2 * k.val + 1)) 0 40) (shapeCast S16 (pair0_lt.sl.v1961_5 d L tab k r g1 g2 hR hin h4) hc16) = AccMath.accVec (rowF fl tab (wL L).val (2 * t1.val) (2 * k.val + 1)) (offF fl (wL L).val (2 * t1.val) (2 * k.val + 1)) 0 41 :=
      acc_step d L fl tab (wL L).val (2 * t1.val) (2 * k.val + 1) 1 _ (hRB _) ⟨40, by decide⟩ ⟨0, by decide⟩ _ rfl _ hwB_40 _ (k1_off44_form ⟨2, by decide⟩ _ _) _ hc16
    have sB0_41 : addf (AccMath.accVec (rowF fl tab (wL L).val (2 * t1.val) (2 * k.val + 1)) (offF fl (wL L).val (2 * t1.val) (2 * k.val + 1)) 0 41) (shapeCast S16 (pair0_lt.sl.v1997_5 d L tab k r g1 g2 hR hin h4) hc16) = AccMath.accVec (rowF fl tab (wL L).val (2 * t1.val) (2 * k.val + 1)) (offF fl (wL L).val (2 * t1.val) (2 * k.val + 1)) 0 42 :=
      acc_step d L fl tab (wL L).val (2 * t1.val) (2 * k.val + 1) 1 _ (hRB _) ⟨41, by decide⟩ ⟨0, by decide⟩ _ rfl _ hwB_41 _ (k1_off45_form ⟨2, by decide⟩ _ _) _ hc16
    have sB0_42 : addf (AccMath.accVec (rowF fl tab (wL L).val (2 * t1.val) (2 * k.val + 1)) (offF fl (wL L).val (2 * t1.val) (2 * k.val + 1)) 0 42) (shapeCast S16 (pair0_lt.sl.v2033_5 d L tab k r g1 g2 hR hin h4) hc16) = AccMath.accVec (rowF fl tab (wL L).val (2 * t1.val) (2 * k.val + 1)) (offF fl (wL L).val (2 * t1.val) (2 * k.val + 1)) 0 43 :=
      acc_step d L fl tab (wL L).val (2 * t1.val) (2 * k.val + 1) 1 _ (hRB _) ⟨42, by decide⟩ ⟨0, by decide⟩ _ rfl _ hwB_42 _ (k1_off46_form ⟨2, by decide⟩ _ _) _ hc16
    have sB0_43 : addf (AccMath.accVec (rowF fl tab (wL L).val (2 * t1.val) (2 * k.val + 1)) (offF fl (wL L).val (2 * t1.val) (2 * k.val + 1)) 0 43) (shapeCast S16 (pair0_lt.sl.v2069_5 d L tab k r g1 g2 hR hin h4) hc16) = AccMath.accVec (rowF fl tab (wL L).val (2 * t1.val) (2 * k.val + 1)) (offF fl (wL L).val (2 * t1.val) (2 * k.val + 1)) 0 44 :=
      acc_step d L fl tab (wL L).val (2 * t1.val) (2 * k.val + 1) 1 _ (hRB _) ⟨43, by decide⟩ ⟨0, by decide⟩ _ rfl _ hwB_43 _ (k1_off47_form ⟨2, by decide⟩ _ _) _ hc16
    have sB0_44 : addf (AccMath.accVec (rowF fl tab (wL L).val (2 * t1.val) (2 * k.val + 1)) (offF fl (wL L).val (2 * t1.val) (2 * k.val + 1)) 0 44) (shapeCast S16 (pair0_lt.sl.v2105_5 d L tab k r g1 g2 hR hin h4) hc16) = AccMath.accVec (rowF fl tab (wL L).val (2 * t1.val) (2 * k.val + 1)) (offF fl (wL L).val (2 * t1.val) (2 * k.val + 1)) 0 45 :=
      acc_step d L fl tab (wL L).val (2 * t1.val) (2 * k.val + 1) 1 _ (hRB _) ⟨44, by decide⟩ ⟨0, by decide⟩ _ rfl _ hwB_44 _ (k1_off48_form ⟨2, by decide⟩ _ _) _ hc16
    have sB0_45 : addf (AccMath.accVec (rowF fl tab (wL L).val (2 * t1.val) (2 * k.val + 1)) (offF fl (wL L).val (2 * t1.val) (2 * k.val + 1)) 0 45) (shapeCast S16 (pair0_lt.sl.v2141_5 d L tab k r g1 g2 hR hin h4) hc16) = AccMath.accVec (rowF fl tab (wL L).val (2 * t1.val) (2 * k.val + 1)) (offF fl (wL L).val (2 * t1.val) (2 * k.val + 1)) 0 46 :=
      acc_step d L fl tab (wL L).val (2 * t1.val) (2 * k.val + 1) 1 _ (hRB _) ⟨45, by decide⟩ ⟨0, by decide⟩ _ rfl _ hwB_45 _ (k1_off49_form ⟨2, by decide⟩ _ _) _ hc16
    have sB0_46 : addf (AccMath.accVec (rowF fl tab (wL L).val (2 * t1.val) (2 * k.val + 1)) (offF fl (wL L).val (2 * t1.val) (2 * k.val + 1)) 0 46) (shapeCast S16 (pair0_lt.sl.v2177_5 d L tab k r g1 g2 hR hin h4) hc16) = AccMath.accVec (rowF fl tab (wL L).val (2 * t1.val) (2 * k.val + 1)) (offF fl (wL L).val (2 * t1.val) (2 * k.val + 1)) 0 47 :=
      acc_step d L fl tab (wL L).val (2 * t1.val) (2 * k.val + 1) 1 _ (hRB _) ⟨46, by decide⟩ ⟨0, by decide⟩ _ rfl _ hwB_46 _ (k1_off50_form ⟨2, by decide⟩ _ _) _ hc16
    have sB0_47 : addf (AccMath.accVec (rowF fl tab (wL L).val (2 * t1.val) (2 * k.val + 1)) (offF fl (wL L).val (2 * t1.val) (2 * k.val + 1)) 0 47) (shapeCast S16 (pair0_lt.sl.v2213_5 d L tab k r g1 g2 hR hin h4) hc16) = AccMath.accVec (rowF fl tab (wL L).val (2 * t1.val) (2 * k.val + 1)) (offF fl (wL L).val (2 * t1.val) (2 * k.val + 1)) 0 48 :=
      acc_step d L fl tab (wL L).val (2 * t1.val) (2 * k.val + 1) 1 _ (hRB _) ⟨47, by decide⟩ ⟨0, by decide⟩ _ rfl _ hwB_47 _ (k1_off51_form ⟨2, by decide⟩ _ _) _ hc16
    have sB0_48 : addf (AccMath.accVec (rowF fl tab (wL L).val (2 * t1.val) (2 * k.val + 1)) (offF fl (wL L).val (2 * t1.val) (2 * k.val + 1)) 0 48) (shapeCast S16 (pair0_lt.sl.v1578 d L tab k r g1 g2 hR hin h4) hc16) = AccMath.accVec (rowF fl tab (wL L).val (2 * t1.val) (2 * k.val + 1)) (offF fl (wL L).val (2 * t1.val) (2 * k.val + 1)) 0 49 :=
      acc_step d L fl tab (wL L).val (2 * t1.val) (2 * k.val + 1) 1 _ (hRB _) ⟨48, by decide⟩ ⟨0, by decide⟩ _ rfl _ hwB_48 _ (k1_off53_form _ _) _ hc16
    have sB0_49 : addf (AccMath.accVec (rowF fl tab (wL L).val (2 * t1.val) (2 * k.val + 1)) (offF fl (wL L).val (2 * t1.val) (2 * k.val + 1)) 0 49) (shapeCast S16 (pair0_lt.sl.v1612 d L tab k r g1 g2 hR hin h4) hc16) = AccMath.accVec (rowF fl tab (wL L).val (2 * t1.val) (2 * k.val + 1)) (offF fl (wL L).val (2 * t1.val) (2 * k.val + 1)) 0 50 :=
      acc_step d L fl tab (wL L).val (2 * t1.val) (2 * k.val + 1) 1 _ (hRB _) ⟨49, by decide⟩ ⟨0, by decide⟩ _ rfl _ hwB_49 _ (k1_off54_form _ _) _ hc16
    have hPB0 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val + 1)) (offF fl (wL L).val (2 * t1.val) (2 * k.val + 1)) 0 0) (shapeCast S16 (pair0_lt.sl.v1673_3 d L tab k r g1 g2 hR hin h4) hc16)) (shapeCast S16 (pair0_lt.sl.v1709_3 d L tab k r g1 g2 hR hin h4) hc16)) (shapeCast S16 (pair0_lt.sl.v1745_3 d L tab k r g1 g2 hR hin h4) hc16)) (shapeCast S16 (pair0_lt.sl.v1781_3 d L tab k r g1 g2 hR hin h4) hc16)) (shapeCast S16 (pair0_lt.sl.v1817_3 d L tab k r g1 g2 hR hin h4) hc16)) (shapeCast S16 (pair0_lt.sl.v1853_3 d L tab k r g1 g2 hR hin h4) hc16)) (shapeCast S16 (pair0_lt.sl.v1889_3 d L tab k r g1 g2 hR hin h4) hc16)) (shapeCast S16 (pair0_lt.sl.v1925_3 d L tab k r g1 g2 hR hin h4) hc16)) (shapeCast S16 (pair0_lt.sl.v1961_3 d L tab k r g1 g2 hR hin h4) hc16)) (shapeCast S16 (pair0_lt.sl.v1997_3 d L tab k r g1 g2 hR hin h4) hc16)) (shapeCast S16 (pair0_lt.sl.v2033_3 d L tab k r g1 g2 hR hin h4) hc16)) (shapeCast S16 (pair0_lt.sl.v2069_3 d L tab k r g1 g2 hR hin h4) hc16)) (shapeCast S16 (pair0_lt.sl.v2105_3 d L tab k r g1 g2 hR hin h4) hc16)) (shapeCast S16 (pair0_lt.sl.v2141_3 d L tab k r g1 g2 hR hin h4) hc16)) (shapeCast S16 (pair0_lt.sl.v2177_3 d L tab k r g1 g2 hR hin h4) hc16)) (shapeCast S16 (pair0_lt.sl.v2213_3 d L tab k r g1 g2 hR hin h4) hc16)) (shapeCast S16 (pair0_lt.sl.v1673_4 d L tab k r g1 g2 hR hin h4) hc16)) (shapeCast S16 (pair0_lt.sl.v1709_4 d L tab k r g1 g2 hR hin h4) hc16)) (shapeCast S16 (pair0_lt.sl.v1745_4 d L tab k r g1 g2 hR hin h4) hc16)) (shapeCast S16 (pair0_lt.sl.v1781_4 d L tab k r g1 g2 hR hin h4) hc16)) (shapeCast S16 (pair0_lt.sl.v1817_4 d L tab k r g1 g2 hR hin h4) hc16)) (shapeCast S16 (pair0_lt.sl.v1853_4 d L tab k r g1 g2 hR hin h4) hc16)) (shapeCast S16 (pair0_lt.sl.v1889_4 d L tab k r g1 g2 hR hin h4) hc16)) (shapeCast S16 (pair0_lt.sl.v1925_4 d L tab k r g1 g2 hR hin h4) hc16)) (shapeCast S16 (pair0_lt.sl.v1961_4 d L tab k r g1 g2 hR hin h4) hc16)) (shapeCast S16 (pair0_lt.sl.v1997_4 d L tab k r g1 g2 hR hin h4) hc16)) (shapeCast S16 (pair0_lt.sl.v2033_4 d L tab k r g1 g2 hR hin h4) hc16)) (shapeCast S16 (pair0_lt.sl.v2069_4 d L tab k r g1 g2 hR hin h4) hc16)) (shapeCast S16 (pair0_lt.sl.v2105_4 d L tab k r g1 g2 hR hin h4) hc16)) (shapeCast S16 (pair0_lt.sl.v2141_4 d L tab k r g1 g2 hR hin h4) hc16)) (shapeCast S16 (pair0_lt.sl.v2177_4 d L tab k r g1 g2 hR hin h4) hc16)) (shapeCast S16 (pair0_lt.sl.v2213_4 d L tab k r g1 g2 hR hin h4) hc16)) (shapeCast S16 (pair0_lt.sl.v1673_5 d L tab k r g1 g2 hR hin h4) hc16)) (shapeCast S16 (pair0_lt.sl.v1709_5 d L tab k r g1 g2 hR hin h4) hc16)) (shapeCast S16 (pair0_lt.sl.v1745_5 d L tab k r g1 g2 hR hin h4) hc16)) (shapeCast S16 (pair0_lt.sl.v1781_5 d L tab k r g1 g2 hR hin h4) hc16)) (shapeCast S16 (pair0_lt.sl.v1817_5 d L tab k r g1 g2 hR hin h4) hc16)) (shapeCast S16 (pair0_lt.sl.v1853_5 d L tab k r g1 g2 hR hin h4) hc16)) (shapeCast S16 (pair0_lt.sl.v1889_5 d L tab k r g1 g2 hR hin h4) hc16)) (shapeCast S16 (pair0_lt.sl.v1925_5 d L tab k r g1 g2 hR hin h4) hc16)) (shapeCast S16 (pair0_lt.sl.v1961_5 d L tab k r g1 g2 hR hin h4) hc16)) (shapeCast S16 (pair0_lt.sl.v1997_5 d L tab k r g1 g2 hR hin h4) hc16)) (shapeCast S16 (pair0_lt.sl.v2033_5 d L tab k r g1 g2 hR hin h4) hc16)) (shapeCast S16 (pair0_lt.sl.v2069_5 d L tab k r g1 g2 hR hin h4) hc16)) (shapeCast S16 (pair0_lt.sl.v2105_5 d L tab k r g1 g2 hR hin h4) hc16)) (shapeCast S16 (pair0_lt.sl.v2141_5 d L tab k r g1 g2 hR hin h4) hc16)) (shapeCast S16 (pair0_lt.sl.v2177_5 d L tab k r g1 g2 hR hin h4) hc16)) (shapeCast S16 (pair0_lt.sl.v2213_5 d L tab k r g1 g2 hR hin h4) hc16)) (shapeCast S16 (pair0_lt.sl.v1578 d L tab k r g1 g2 hR hin h4) hc16)) (shapeCast S16 (pair0_lt.sl.v1612 d L tab k r g1 g2 hR hin h4) hc16)) hc1 x = Spec.bagPartial fl tab (128 * (wL L).val + 16 * (2 * t1.val) + (2 * k.val + 1)) (16 * 0 + (x 2).val) 50 := fun x => by
      rw [sB0_0, sB0_1, sB0_2, sB0_3, sB0_4, sB0_5, sB0_6, sB0_7, sB0_8, sB0_9, sB0_10, sB0_11, sB0_12, sB0_13, sB0_14, sB0_15, sB0_16, sB0_17, sB0_18, sB0_19, sB0_20, sB0_21, sB0_22, sB0_23, sB0_24, sB0_25, sB0_26, sB0_27, sB0_28, sB0_29, sB0_30, sB0_31, sB0_32, sB0_33, sB0_34, sB0_35, sB0_36, sB0_37, sB0_38, sB0_39, sB0_40, sB0_41, sB0_42, sB0_43, sB0_44, sB0_45, sB0_46, sB0_47, sB0_48, sB0_49]; exact payload_ok fl tab (wL L).val (2 * t1.val) (2 * k.val + 1) ⟨0, by decide⟩ hc1 x
    have sB1_0 : addf (AccMath.accVec (rowF fl tab (wL L).val (2 * t1.val) (2 * k.val + 1)) (offF fl (wL L).val (2 * t1.val) (2 * k.val + 1)) 1 0) (shapeCast S16 (pair0_lt.sl.v1681_3 d L tab k r g1 g2 hR hin h4) hc16) = AccMath.accVec (rowF fl tab (wL L).val (2 * t1.val) (2 * k.val + 1)) (offF fl (wL L).val (2 * t1.val) (2 * k.val + 1)) 1 1 :=
      acc_step d L fl tab (wL L).val (2 * t1.val) (2 * k.val + 1) 1 _ (hRB _) ⟨0, by decide⟩ ⟨1, by decide⟩ _ rfl _ hwB_0 _ (k1_off36_form ⟨0, by decide⟩ _ _) _ hc16
    have sB1_1 : addf (AccMath.accVec (rowF fl tab (wL L).val (2 * t1.val) (2 * k.val + 1)) (offF fl (wL L).val (2 * t1.val) (2 * k.val + 1)) 1 1) (shapeCast S16 (pair0_lt.sl.v1717_3 d L tab k r g1 g2 hR hin h4) hc16) = AccMath.accVec (rowF fl tab (wL L).val (2 * t1.val) (2 * k.val + 1)) (offF fl (wL L).val (2 * t1.val) (2 * k.val + 1)) 1 2 :=
      acc_step d L fl tab (wL L).val (2 * t1.val) (2 * k.val + 1) 1 _ (hRB _) ⟨1, by decide⟩ ⟨1, by decide⟩ _ rfl _ hwB_1 _ (k1_off37_form ⟨0, by decide⟩ _ _) _ hc16
    have sB1_2 : addf (AccMath.accVec (rowF fl tab (wL L).val (2 * t1.val) (2 * k.val + 1)) (offF fl (wL L).val (2 * t1.val) (2 * k.val + 1)) 1 2) (shapeCast S16 (pair0_lt.sl.v1753_3 d L tab k r g1 g2 hR hin h4) hc16) = AccMath.accVec (rowF fl tab (wL L).val (2 * t1.val) (2 * k.val + 1)) (offF fl (wL L).val (2 * t1.val) (2 * k.val + 1)) 1 3 :=
      acc_step d L fl tab (wL L).val (2 * t1.val) (2 * k.val + 1) 1 _ (hRB _) ⟨2, by decide⟩ ⟨1, by decide⟩ _ rfl _ hwB_2 _ (k1_off38_form ⟨0, by decide⟩ _ _) _ hc16
    have sB1_3 : addf (AccMath.accVec (rowF fl tab (wL L).val (2 * t1.val) (2 * k.val + 1)) (offF fl (wL L).val (2 * t1.val) (2 * k.val + 1)) 1 3) (shapeCast S16 (pair0_lt.sl.v1789_3 d L tab k r g1 g2 hR hin h4) hc16) = AccMath.accVec (rowF fl tab (wL L).val (2 * t1.val) (2 * k.val + 1)) (offF fl (wL L).val (2 * t1.val) (2 * k.val + 1)) 1 4 :=
      acc_step d L fl tab (wL L).val (2 * t1.val) (2 * k.val + 1) 1 _ (hRB _) ⟨3, by decide⟩ ⟨1, by decide⟩ _ rfl _ hwB_3 _ (k1_off39_form ⟨0, by decide⟩ _ _) _ hc16
    have sB1_4 : addf (AccMath.accVec (rowF fl tab (wL L).val (2 * t1.val) (2 * k.val + 1)) (offF fl (wL L).val (2 * t1.val) (2 * k.val + 1)) 1 4) (shapeCast S16 (pair0_lt.sl.v1825_3 d L tab k r g1 g2 hR hin h4) hc16) = AccMath.accVec (rowF fl tab (wL L).val (2 * t1.val) (2 * k.val + 1)) (offF fl (wL L).val (2 * t1.val) (2 * k.val + 1)) 1 5 :=
      acc_step d L fl tab (wL L).val (2 * t1.val) (2 * k.val + 1) 1 _ (hRB _) ⟨4, by decide⟩ ⟨1, by decide⟩ _ rfl _ hwB_4 _ (k1_off40_form ⟨0, by decide⟩ _ _) _ hc16
    have sB1_5 : addf (AccMath.accVec (rowF fl tab (wL L).val (2 * t1.val) (2 * k.val + 1)) (offF fl (wL L).val (2 * t1.val) (2 * k.val + 1)) 1 5) (shapeCast S16 (pair0_lt.sl.v1861_3 d L tab k r g1 g2 hR hin h4) hc16) = AccMath.accVec (rowF fl tab (wL L).val (2 * t1.val) (2 * k.val + 1)) (offF fl (wL L).val (2 * t1.val) (2 * k.val + 1)) 1 6 :=
      acc_step d L fl tab (wL L).val (2 * t1.val) (2 * k.val + 1) 1 _ (hRB _) ⟨5, by decide⟩ ⟨1, by decide⟩ _ rfl _ hwB_5 _ (k1_off41_form ⟨0, by decide⟩ _ _) _ hc16
    have sB1_6 : addf (AccMath.accVec (rowF fl tab (wL L).val (2 * t1.val) (2 * k.val + 1)) (offF fl (wL L).val (2 * t1.val) (2 * k.val + 1)) 1 6) (shapeCast S16 (pair0_lt.sl.v1897_3 d L tab k r g1 g2 hR hin h4) hc16) = AccMath.accVec (rowF fl tab (wL L).val (2 * t1.val) (2 * k.val + 1)) (offF fl (wL L).val (2 * t1.val) (2 * k.val + 1)) 1 7 :=
      acc_step d L fl tab (wL L).val (2 * t1.val) (2 * k.val + 1) 1 _ (hRB _) ⟨6, by decide⟩ ⟨1, by decide⟩ _ rfl _ hwB_6 _ (k1_off42_form ⟨0, by decide⟩ _ _) _ hc16
    have sB1_7 : addf (AccMath.accVec (rowF fl tab (wL L).val (2 * t1.val) (2 * k.val + 1)) (offF fl (wL L).val (2 * t1.val) (2 * k.val + 1)) 1 7) (shapeCast S16 (pair0_lt.sl.v1933_3 d L tab k r g1 g2 hR hin h4) hc16) = AccMath.accVec (rowF fl tab (wL L).val (2 * t1.val) (2 * k.val + 1)) (offF fl (wL L).val (2 * t1.val) (2 * k.val + 1)) 1 8 :=
      acc_step d L fl tab (wL L).val (2 * t1.val) (2 * k.val + 1) 1 _ (hRB _) ⟨7, by decide⟩ ⟨1, by decide⟩ _ rfl _ hwB_7 _ (k1_off43_form ⟨0, by decide⟩ _ _) _ hc16
    have sB1_8 : addf (AccMath.accVec (rowF fl tab (wL L).val (2 * t1.val) (2 * k.val + 1)) (offF fl (wL L).val (2 * t1.val) (2 * k.val + 1)) 1 8) (shapeCast S16 (pair0_lt.sl.v1969_3 d L tab k r g1 g2 hR hin h4) hc16) = AccMath.accVec (rowF fl tab (wL L).val (2 * t1.val) (2 * k.val + 1)) (offF fl (wL L).val (2 * t1.val) (2 * k.val + 1)) 1 9 :=
      acc_step d L fl tab (wL L).val (2 * t1.val) (2 * k.val + 1) 1 _ (hRB _) ⟨8, by decide⟩ ⟨1, by decide⟩ _ rfl _ hwB_8 _ (k1_off44_form ⟨0, by decide⟩ _ _) _ hc16
    have sB1_9 : addf (AccMath.accVec (rowF fl tab (wL L).val (2 * t1.val) (2 * k.val + 1)) (offF fl (wL L).val (2 * t1.val) (2 * k.val + 1)) 1 9) (shapeCast S16 (pair0_lt.sl.v2005_3 d L tab k r g1 g2 hR hin h4) hc16) = AccMath.accVec (rowF fl tab (wL L).val (2 * t1.val) (2 * k.val + 1)) (offF fl (wL L).val (2 * t1.val) (2 * k.val + 1)) 1 10 :=
      acc_step d L fl tab (wL L).val (2 * t1.val) (2 * k.val + 1) 1 _ (hRB _) ⟨9, by decide⟩ ⟨1, by decide⟩ _ rfl _ hwB_9 _ (k1_off45_form ⟨0, by decide⟩ _ _) _ hc16
    have sB1_10 : addf (AccMath.accVec (rowF fl tab (wL L).val (2 * t1.val) (2 * k.val + 1)) (offF fl (wL L).val (2 * t1.val) (2 * k.val + 1)) 1 10) (shapeCast S16 (pair0_lt.sl.v2041_3 d L tab k r g1 g2 hR hin h4) hc16) = AccMath.accVec (rowF fl tab (wL L).val (2 * t1.val) (2 * k.val + 1)) (offF fl (wL L).val (2 * t1.val) (2 * k.val + 1)) 1 11 :=
      acc_step d L fl tab (wL L).val (2 * t1.val) (2 * k.val + 1) 1 _ (hRB _) ⟨10, by decide⟩ ⟨1, by decide⟩ _ rfl _ hwB_10 _ (k1_off46_form ⟨0, by decide⟩ _ _) _ hc16
    have sB1_11 : addf (AccMath.accVec (rowF fl tab (wL L).val (2 * t1.val) (2 * k.val + 1)) (offF fl (wL L).val (2 * t1.val) (2 * k.val + 1)) 1 11) (shapeCast S16 (pair0_lt.sl.v2077_3 d L tab k r g1 g2 hR hin h4) hc16) = AccMath.accVec (rowF fl tab (wL L).val (2 * t1.val) (2 * k.val + 1)) (offF fl (wL L).val (2 * t1.val) (2 * k.val + 1)) 1 12 :=
      acc_step d L fl tab (wL L).val (2 * t1.val) (2 * k.val + 1) 1 _ (hRB _) ⟨11, by decide⟩ ⟨1, by decide⟩ _ rfl _ hwB_11 _ (k1_off47_form ⟨0, by decide⟩ _ _) _ hc16
    have sB1_12 : addf (AccMath.accVec (rowF fl tab (wL L).val (2 * t1.val) (2 * k.val + 1)) (offF fl (wL L).val (2 * t1.val) (2 * k.val + 1)) 1 12) (shapeCast S16 (pair0_lt.sl.v2113_3 d L tab k r g1 g2 hR hin h4) hc16) = AccMath.accVec (rowF fl tab (wL L).val (2 * t1.val) (2 * k.val + 1)) (offF fl (wL L).val (2 * t1.val) (2 * k.val + 1)) 1 13 :=
      acc_step d L fl tab (wL L).val (2 * t1.val) (2 * k.val + 1) 1 _ (hRB _) ⟨12, by decide⟩ ⟨1, by decide⟩ _ rfl _ hwB_12 _ (k1_off48_form ⟨0, by decide⟩ _ _) _ hc16
    have sB1_13 : addf (AccMath.accVec (rowF fl tab (wL L).val (2 * t1.val) (2 * k.val + 1)) (offF fl (wL L).val (2 * t1.val) (2 * k.val + 1)) 1 13) (shapeCast S16 (pair0_lt.sl.v2149_3 d L tab k r g1 g2 hR hin h4) hc16) = AccMath.accVec (rowF fl tab (wL L).val (2 * t1.val) (2 * k.val + 1)) (offF fl (wL L).val (2 * t1.val) (2 * k.val + 1)) 1 14 :=
      acc_step d L fl tab (wL L).val (2 * t1.val) (2 * k.val + 1) 1 _ (hRB _) ⟨13, by decide⟩ ⟨1, by decide⟩ _ rfl _ hwB_13 _ (k1_off49_form ⟨0, by decide⟩ _ _) _ hc16
    have sB1_14 : addf (AccMath.accVec (rowF fl tab (wL L).val (2 * t1.val) (2 * k.val + 1)) (offF fl (wL L).val (2 * t1.val) (2 * k.val + 1)) 1 14) (shapeCast S16 (pair0_lt.sl.v2185_3 d L tab k r g1 g2 hR hin h4) hc16) = AccMath.accVec (rowF fl tab (wL L).val (2 * t1.val) (2 * k.val + 1)) (offF fl (wL L).val (2 * t1.val) (2 * k.val + 1)) 1 15 :=
      acc_step d L fl tab (wL L).val (2 * t1.val) (2 * k.val + 1) 1 _ (hRB _) ⟨14, by decide⟩ ⟨1, by decide⟩ _ rfl _ hwB_14 _ (k1_off50_form ⟨0, by decide⟩ _ _) _ hc16
    have sB1_15 : addf (AccMath.accVec (rowF fl tab (wL L).val (2 * t1.val) (2 * k.val + 1)) (offF fl (wL L).val (2 * t1.val) (2 * k.val + 1)) 1 15) (shapeCast S16 (pair0_lt.sl.v2221_3 d L tab k r g1 g2 hR hin h4) hc16) = AccMath.accVec (rowF fl tab (wL L).val (2 * t1.val) (2 * k.val + 1)) (offF fl (wL L).val (2 * t1.val) (2 * k.val + 1)) 1 16 :=
      acc_step d L fl tab (wL L).val (2 * t1.val) (2 * k.val + 1) 1 _ (hRB _) ⟨15, by decide⟩ ⟨1, by decide⟩ _ rfl _ hwB_15 _ (k1_off51_form ⟨0, by decide⟩ _ _) _ hc16
    have sB1_16 : addf (AccMath.accVec (rowF fl tab (wL L).val (2 * t1.val) (2 * k.val + 1)) (offF fl (wL L).val (2 * t1.val) (2 * k.val + 1)) 1 16) (shapeCast S16 (pair0_lt.sl.v1681_4 d L tab k r g1 g2 hR hin h4) hc16) = AccMath.accVec (rowF fl tab (wL L).val (2 * t1.val) (2 * k.val + 1)) (offF fl (wL L).val (2 * t1.val) (2 * k.val + 1)) 1 17 :=
      acc_step d L fl tab (wL L).val (2 * t1.val) (2 * k.val + 1) 1 _ (hRB _) ⟨16, by decide⟩ ⟨1, by decide⟩ _ rfl _ hwB_16 _ (k1_off36_form ⟨1, by decide⟩ _ _) _ hc16
    have sB1_17 : addf (AccMath.accVec (rowF fl tab (wL L).val (2 * t1.val) (2 * k.val + 1)) (offF fl (wL L).val (2 * t1.val) (2 * k.val + 1)) 1 17) (shapeCast S16 (pair0_lt.sl.v1717_4 d L tab k r g1 g2 hR hin h4) hc16) = AccMath.accVec (rowF fl tab (wL L).val (2 * t1.val) (2 * k.val + 1)) (offF fl (wL L).val (2 * t1.val) (2 * k.val + 1)) 1 18 :=
      acc_step d L fl tab (wL L).val (2 * t1.val) (2 * k.val + 1) 1 _ (hRB _) ⟨17, by decide⟩ ⟨1, by decide⟩ _ rfl _ hwB_17 _ (k1_off37_form ⟨1, by decide⟩ _ _) _ hc16
    have sB1_18 : addf (AccMath.accVec (rowF fl tab (wL L).val (2 * t1.val) (2 * k.val + 1)) (offF fl (wL L).val (2 * t1.val) (2 * k.val + 1)) 1 18) (shapeCast S16 (pair0_lt.sl.v1753_4 d L tab k r g1 g2 hR hin h4) hc16) = AccMath.accVec (rowF fl tab (wL L).val (2 * t1.val) (2 * k.val + 1)) (offF fl (wL L).val (2 * t1.val) (2 * k.val + 1)) 1 19 :=
      acc_step d L fl tab (wL L).val (2 * t1.val) (2 * k.val + 1) 1 _ (hRB _) ⟨18, by decide⟩ ⟨1, by decide⟩ _ rfl _ hwB_18 _ (k1_off38_form ⟨1, by decide⟩ _ _) _ hc16
    have sB1_19 : addf (AccMath.accVec (rowF fl tab (wL L).val (2 * t1.val) (2 * k.val + 1)) (offF fl (wL L).val (2 * t1.val) (2 * k.val + 1)) 1 19) (shapeCast S16 (pair0_lt.sl.v1789_4 d L tab k r g1 g2 hR hin h4) hc16) = AccMath.accVec (rowF fl tab (wL L).val (2 * t1.val) (2 * k.val + 1)) (offF fl (wL L).val (2 * t1.val) (2 * k.val + 1)) 1 20 :=
      acc_step d L fl tab (wL L).val (2 * t1.val) (2 * k.val + 1) 1 _ (hRB _) ⟨19, by decide⟩ ⟨1, by decide⟩ _ rfl _ hwB_19 _ (k1_off39_form ⟨1, by decide⟩ _ _) _ hc16
    have sB1_20 : addf (AccMath.accVec (rowF fl tab (wL L).val (2 * t1.val) (2 * k.val + 1)) (offF fl (wL L).val (2 * t1.val) (2 * k.val + 1)) 1 20) (shapeCast S16 (pair0_lt.sl.v1825_4 d L tab k r g1 g2 hR hin h4) hc16) = AccMath.accVec (rowF fl tab (wL L).val (2 * t1.val) (2 * k.val + 1)) (offF fl (wL L).val (2 * t1.val) (2 * k.val + 1)) 1 21 :=
      acc_step d L fl tab (wL L).val (2 * t1.val) (2 * k.val + 1) 1 _ (hRB _) ⟨20, by decide⟩ ⟨1, by decide⟩ _ rfl _ hwB_20 _ (k1_off40_form ⟨1, by decide⟩ _ _) _ hc16
    have sB1_21 : addf (AccMath.accVec (rowF fl tab (wL L).val (2 * t1.val) (2 * k.val + 1)) (offF fl (wL L).val (2 * t1.val) (2 * k.val + 1)) 1 21) (shapeCast S16 (pair0_lt.sl.v1861_4 d L tab k r g1 g2 hR hin h4) hc16) = AccMath.accVec (rowF fl tab (wL L).val (2 * t1.val) (2 * k.val + 1)) (offF fl (wL L).val (2 * t1.val) (2 * k.val + 1)) 1 22 :=
      acc_step d L fl tab (wL L).val (2 * t1.val) (2 * k.val + 1) 1 _ (hRB _) ⟨21, by decide⟩ ⟨1, by decide⟩ _ rfl _ hwB_21 _ (k1_off41_form ⟨1, by decide⟩ _ _) _ hc16
    have sB1_22 : addf (AccMath.accVec (rowF fl tab (wL L).val (2 * t1.val) (2 * k.val + 1)) (offF fl (wL L).val (2 * t1.val) (2 * k.val + 1)) 1 22) (shapeCast S16 (pair0_lt.sl.v1897_4 d L tab k r g1 g2 hR hin h4) hc16) = AccMath.accVec (rowF fl tab (wL L).val (2 * t1.val) (2 * k.val + 1)) (offF fl (wL L).val (2 * t1.val) (2 * k.val + 1)) 1 23 :=
      acc_step d L fl tab (wL L).val (2 * t1.val) (2 * k.val + 1) 1 _ (hRB _) ⟨22, by decide⟩ ⟨1, by decide⟩ _ rfl _ hwB_22 _ (k1_off42_form ⟨1, by decide⟩ _ _) _ hc16
    have sB1_23 : addf (AccMath.accVec (rowF fl tab (wL L).val (2 * t1.val) (2 * k.val + 1)) (offF fl (wL L).val (2 * t1.val) (2 * k.val + 1)) 1 23) (shapeCast S16 (pair0_lt.sl.v1933_4 d L tab k r g1 g2 hR hin h4) hc16) = AccMath.accVec (rowF fl tab (wL L).val (2 * t1.val) (2 * k.val + 1)) (offF fl (wL L).val (2 * t1.val) (2 * k.val + 1)) 1 24 :=
      acc_step d L fl tab (wL L).val (2 * t1.val) (2 * k.val + 1) 1 _ (hRB _) ⟨23, by decide⟩ ⟨1, by decide⟩ _ rfl _ hwB_23 _ (k1_off43_form ⟨1, by decide⟩ _ _) _ hc16
    have sB1_24 : addf (AccMath.accVec (rowF fl tab (wL L).val (2 * t1.val) (2 * k.val + 1)) (offF fl (wL L).val (2 * t1.val) (2 * k.val + 1)) 1 24) (shapeCast S16 (pair0_lt.sl.v1969_4 d L tab k r g1 g2 hR hin h4) hc16) = AccMath.accVec (rowF fl tab (wL L).val (2 * t1.val) (2 * k.val + 1)) (offF fl (wL L).val (2 * t1.val) (2 * k.val + 1)) 1 25 :=
      acc_step d L fl tab (wL L).val (2 * t1.val) (2 * k.val + 1) 1 _ (hRB _) ⟨24, by decide⟩ ⟨1, by decide⟩ _ rfl _ hwB_24 _ (k1_off44_form ⟨1, by decide⟩ _ _) _ hc16
    have sB1_25 : addf (AccMath.accVec (rowF fl tab (wL L).val (2 * t1.val) (2 * k.val + 1)) (offF fl (wL L).val (2 * t1.val) (2 * k.val + 1)) 1 25) (shapeCast S16 (pair0_lt.sl.v2005_4 d L tab k r g1 g2 hR hin h4) hc16) = AccMath.accVec (rowF fl tab (wL L).val (2 * t1.val) (2 * k.val + 1)) (offF fl (wL L).val (2 * t1.val) (2 * k.val + 1)) 1 26 :=
      acc_step d L fl tab (wL L).val (2 * t1.val) (2 * k.val + 1) 1 _ (hRB _) ⟨25, by decide⟩ ⟨1, by decide⟩ _ rfl _ hwB_25 _ (k1_off45_form ⟨1, by decide⟩ _ _) _ hc16
    have sB1_26 : addf (AccMath.accVec (rowF fl tab (wL L).val (2 * t1.val) (2 * k.val + 1)) (offF fl (wL L).val (2 * t1.val) (2 * k.val + 1)) 1 26) (shapeCast S16 (pair0_lt.sl.v2041_4 d L tab k r g1 g2 hR hin h4) hc16) = AccMath.accVec (rowF fl tab (wL L).val (2 * t1.val) (2 * k.val + 1)) (offF fl (wL L).val (2 * t1.val) (2 * k.val + 1)) 1 27 :=
      acc_step d L fl tab (wL L).val (2 * t1.val) (2 * k.val + 1) 1 _ (hRB _) ⟨26, by decide⟩ ⟨1, by decide⟩ _ rfl _ hwB_26 _ (k1_off46_form ⟨1, by decide⟩ _ _) _ hc16
    have sB1_27 : addf (AccMath.accVec (rowF fl tab (wL L).val (2 * t1.val) (2 * k.val + 1)) (offF fl (wL L).val (2 * t1.val) (2 * k.val + 1)) 1 27) (shapeCast S16 (pair0_lt.sl.v2077_4 d L tab k r g1 g2 hR hin h4) hc16) = AccMath.accVec (rowF fl tab (wL L).val (2 * t1.val) (2 * k.val + 1)) (offF fl (wL L).val (2 * t1.val) (2 * k.val + 1)) 1 28 :=
      acc_step d L fl tab (wL L).val (2 * t1.val) (2 * k.val + 1) 1 _ (hRB _) ⟨27, by decide⟩ ⟨1, by decide⟩ _ rfl _ hwB_27 _ (k1_off47_form ⟨1, by decide⟩ _ _) _ hc16
    have sB1_28 : addf (AccMath.accVec (rowF fl tab (wL L).val (2 * t1.val) (2 * k.val + 1)) (offF fl (wL L).val (2 * t1.val) (2 * k.val + 1)) 1 28) (shapeCast S16 (pair0_lt.sl.v2113_4 d L tab k r g1 g2 hR hin h4) hc16) = AccMath.accVec (rowF fl tab (wL L).val (2 * t1.val) (2 * k.val + 1)) (offF fl (wL L).val (2 * t1.val) (2 * k.val + 1)) 1 29 :=
      acc_step d L fl tab (wL L).val (2 * t1.val) (2 * k.val + 1) 1 _ (hRB _) ⟨28, by decide⟩ ⟨1, by decide⟩ _ rfl _ hwB_28 _ (k1_off48_form ⟨1, by decide⟩ _ _) _ hc16
    have sB1_29 : addf (AccMath.accVec (rowF fl tab (wL L).val (2 * t1.val) (2 * k.val + 1)) (offF fl (wL L).val (2 * t1.val) (2 * k.val + 1)) 1 29) (shapeCast S16 (pair0_lt.sl.v2149_4 d L tab k r g1 g2 hR hin h4) hc16) = AccMath.accVec (rowF fl tab (wL L).val (2 * t1.val) (2 * k.val + 1)) (offF fl (wL L).val (2 * t1.val) (2 * k.val + 1)) 1 30 :=
      acc_step d L fl tab (wL L).val (2 * t1.val) (2 * k.val + 1) 1 _ (hRB _) ⟨29, by decide⟩ ⟨1, by decide⟩ _ rfl _ hwB_29 _ (k1_off49_form ⟨1, by decide⟩ _ _) _ hc16
    have sB1_30 : addf (AccMath.accVec (rowF fl tab (wL L).val (2 * t1.val) (2 * k.val + 1)) (offF fl (wL L).val (2 * t1.val) (2 * k.val + 1)) 1 30) (shapeCast S16 (pair0_lt.sl.v2185_4 d L tab k r g1 g2 hR hin h4) hc16) = AccMath.accVec (rowF fl tab (wL L).val (2 * t1.val) (2 * k.val + 1)) (offF fl (wL L).val (2 * t1.val) (2 * k.val + 1)) 1 31 :=
      acc_step d L fl tab (wL L).val (2 * t1.val) (2 * k.val + 1) 1 _ (hRB _) ⟨30, by decide⟩ ⟨1, by decide⟩ _ rfl _ hwB_30 _ (k1_off50_form ⟨1, by decide⟩ _ _) _ hc16
    have sB1_31 : addf (AccMath.accVec (rowF fl tab (wL L).val (2 * t1.val) (2 * k.val + 1)) (offF fl (wL L).val (2 * t1.val) (2 * k.val + 1)) 1 31) (shapeCast S16 (pair0_lt.sl.v2221_4 d L tab k r g1 g2 hR hin h4) hc16) = AccMath.accVec (rowF fl tab (wL L).val (2 * t1.val) (2 * k.val + 1)) (offF fl (wL L).val (2 * t1.val) (2 * k.val + 1)) 1 32 :=
      acc_step d L fl tab (wL L).val (2 * t1.val) (2 * k.val + 1) 1 _ (hRB _) ⟨31, by decide⟩ ⟨1, by decide⟩ _ rfl _ hwB_31 _ (k1_off51_form ⟨1, by decide⟩ _ _) _ hc16
    have sB1_32 : addf (AccMath.accVec (rowF fl tab (wL L).val (2 * t1.val) (2 * k.val + 1)) (offF fl (wL L).val (2 * t1.val) (2 * k.val + 1)) 1 32) (shapeCast S16 (pair0_lt.sl.v1681_5 d L tab k r g1 g2 hR hin h4) hc16) = AccMath.accVec (rowF fl tab (wL L).val (2 * t1.val) (2 * k.val + 1)) (offF fl (wL L).val (2 * t1.val) (2 * k.val + 1)) 1 33 :=
      acc_step d L fl tab (wL L).val (2 * t1.val) (2 * k.val + 1) 1 _ (hRB _) ⟨32, by decide⟩ ⟨1, by decide⟩ _ rfl _ hwB_32 _ (k1_off36_form ⟨2, by decide⟩ _ _) _ hc16
    have sB1_33 : addf (AccMath.accVec (rowF fl tab (wL L).val (2 * t1.val) (2 * k.val + 1)) (offF fl (wL L).val (2 * t1.val) (2 * k.val + 1)) 1 33) (shapeCast S16 (pair0_lt.sl.v1717_5 d L tab k r g1 g2 hR hin h4) hc16) = AccMath.accVec (rowF fl tab (wL L).val (2 * t1.val) (2 * k.val + 1)) (offF fl (wL L).val (2 * t1.val) (2 * k.val + 1)) 1 34 :=
      acc_step d L fl tab (wL L).val (2 * t1.val) (2 * k.val + 1) 1 _ (hRB _) ⟨33, by decide⟩ ⟨1, by decide⟩ _ rfl _ hwB_33 _ (k1_off37_form ⟨2, by decide⟩ _ _) _ hc16
    have sB1_34 : addf (AccMath.accVec (rowF fl tab (wL L).val (2 * t1.val) (2 * k.val + 1)) (offF fl (wL L).val (2 * t1.val) (2 * k.val + 1)) 1 34) (shapeCast S16 (pair0_lt.sl.v1753_5 d L tab k r g1 g2 hR hin h4) hc16) = AccMath.accVec (rowF fl tab (wL L).val (2 * t1.val) (2 * k.val + 1)) (offF fl (wL L).val (2 * t1.val) (2 * k.val + 1)) 1 35 :=
      acc_step d L fl tab (wL L).val (2 * t1.val) (2 * k.val + 1) 1 _ (hRB _) ⟨34, by decide⟩ ⟨1, by decide⟩ _ rfl _ hwB_34 _ (k1_off38_form ⟨2, by decide⟩ _ _) _ hc16
    have sB1_35 : addf (AccMath.accVec (rowF fl tab (wL L).val (2 * t1.val) (2 * k.val + 1)) (offF fl (wL L).val (2 * t1.val) (2 * k.val + 1)) 1 35) (shapeCast S16 (pair0_lt.sl.v1789_5 d L tab k r g1 g2 hR hin h4) hc16) = AccMath.accVec (rowF fl tab (wL L).val (2 * t1.val) (2 * k.val + 1)) (offF fl (wL L).val (2 * t1.val) (2 * k.val + 1)) 1 36 :=
      acc_step d L fl tab (wL L).val (2 * t1.val) (2 * k.val + 1) 1 _ (hRB _) ⟨35, by decide⟩ ⟨1, by decide⟩ _ rfl _ hwB_35 _ (k1_off39_form ⟨2, by decide⟩ _ _) _ hc16
    have sB1_36 : addf (AccMath.accVec (rowF fl tab (wL L).val (2 * t1.val) (2 * k.val + 1)) (offF fl (wL L).val (2 * t1.val) (2 * k.val + 1)) 1 36) (shapeCast S16 (pair0_lt.sl.v1825_5 d L tab k r g1 g2 hR hin h4) hc16) = AccMath.accVec (rowF fl tab (wL L).val (2 * t1.val) (2 * k.val + 1)) (offF fl (wL L).val (2 * t1.val) (2 * k.val + 1)) 1 37 :=
      acc_step d L fl tab (wL L).val (2 * t1.val) (2 * k.val + 1) 1 _ (hRB _) ⟨36, by decide⟩ ⟨1, by decide⟩ _ rfl _ hwB_36 _ (k1_off40_form ⟨2, by decide⟩ _ _) _ hc16
    have sB1_37 : addf (AccMath.accVec (rowF fl tab (wL L).val (2 * t1.val) (2 * k.val + 1)) (offF fl (wL L).val (2 * t1.val) (2 * k.val + 1)) 1 37) (shapeCast S16 (pair0_lt.sl.v1861_5 d L tab k r g1 g2 hR hin h4) hc16) = AccMath.accVec (rowF fl tab (wL L).val (2 * t1.val) (2 * k.val + 1)) (offF fl (wL L).val (2 * t1.val) (2 * k.val + 1)) 1 38 :=
      acc_step d L fl tab (wL L).val (2 * t1.val) (2 * k.val + 1) 1 _ (hRB _) ⟨37, by decide⟩ ⟨1, by decide⟩ _ rfl _ hwB_37 _ (k1_off41_form ⟨2, by decide⟩ _ _) _ hc16
    have sB1_38 : addf (AccMath.accVec (rowF fl tab (wL L).val (2 * t1.val) (2 * k.val + 1)) (offF fl (wL L).val (2 * t1.val) (2 * k.val + 1)) 1 38) (shapeCast S16 (pair0_lt.sl.v1897_5 d L tab k r g1 g2 hR hin h4) hc16) = AccMath.accVec (rowF fl tab (wL L).val (2 * t1.val) (2 * k.val + 1)) (offF fl (wL L).val (2 * t1.val) (2 * k.val + 1)) 1 39 :=
      acc_step d L fl tab (wL L).val (2 * t1.val) (2 * k.val + 1) 1 _ (hRB _) ⟨38, by decide⟩ ⟨1, by decide⟩ _ rfl _ hwB_38 _ (k1_off42_form ⟨2, by decide⟩ _ _) _ hc16
    have sB1_39 : addf (AccMath.accVec (rowF fl tab (wL L).val (2 * t1.val) (2 * k.val + 1)) (offF fl (wL L).val (2 * t1.val) (2 * k.val + 1)) 1 39) (shapeCast S16 (pair0_lt.sl.v1933_5 d L tab k r g1 g2 hR hin h4) hc16) = AccMath.accVec (rowF fl tab (wL L).val (2 * t1.val) (2 * k.val + 1)) (offF fl (wL L).val (2 * t1.val) (2 * k.val + 1)) 1 40 :=
      acc_step d L fl tab (wL L).val (2 * t1.val) (2 * k.val + 1) 1 _ (hRB _) ⟨39, by decide⟩ ⟨1, by decide⟩ _ rfl _ hwB_39 _ (k1_off43_form ⟨2, by decide⟩ _ _) _ hc16
    have sB1_40 : addf (AccMath.accVec (rowF fl tab (wL L).val (2 * t1.val) (2 * k.val + 1)) (offF fl (wL L).val (2 * t1.val) (2 * k.val + 1)) 1 40) (shapeCast S16 (pair0_lt.sl.v1969_5 d L tab k r g1 g2 hR hin h4) hc16) = AccMath.accVec (rowF fl tab (wL L).val (2 * t1.val) (2 * k.val + 1)) (offF fl (wL L).val (2 * t1.val) (2 * k.val + 1)) 1 41 :=
      acc_step d L fl tab (wL L).val (2 * t1.val) (2 * k.val + 1) 1 _ (hRB _) ⟨40, by decide⟩ ⟨1, by decide⟩ _ rfl _ hwB_40 _ (k1_off44_form ⟨2, by decide⟩ _ _) _ hc16
    have sB1_41 : addf (AccMath.accVec (rowF fl tab (wL L).val (2 * t1.val) (2 * k.val + 1)) (offF fl (wL L).val (2 * t1.val) (2 * k.val + 1)) 1 41) (shapeCast S16 (pair0_lt.sl.v2005_5 d L tab k r g1 g2 hR hin h4) hc16) = AccMath.accVec (rowF fl tab (wL L).val (2 * t1.val) (2 * k.val + 1)) (offF fl (wL L).val (2 * t1.val) (2 * k.val + 1)) 1 42 :=
      acc_step d L fl tab (wL L).val (2 * t1.val) (2 * k.val + 1) 1 _ (hRB _) ⟨41, by decide⟩ ⟨1, by decide⟩ _ rfl _ hwB_41 _ (k1_off45_form ⟨2, by decide⟩ _ _) _ hc16
    have sB1_42 : addf (AccMath.accVec (rowF fl tab (wL L).val (2 * t1.val) (2 * k.val + 1)) (offF fl (wL L).val (2 * t1.val) (2 * k.val + 1)) 1 42) (shapeCast S16 (pair0_lt.sl.v2041_5 d L tab k r g1 g2 hR hin h4) hc16) = AccMath.accVec (rowF fl tab (wL L).val (2 * t1.val) (2 * k.val + 1)) (offF fl (wL L).val (2 * t1.val) (2 * k.val + 1)) 1 43 :=
      acc_step d L fl tab (wL L).val (2 * t1.val) (2 * k.val + 1) 1 _ (hRB _) ⟨42, by decide⟩ ⟨1, by decide⟩ _ rfl _ hwB_42 _ (k1_off46_form ⟨2, by decide⟩ _ _) _ hc16
    have sB1_43 : addf (AccMath.accVec (rowF fl tab (wL L).val (2 * t1.val) (2 * k.val + 1)) (offF fl (wL L).val (2 * t1.val) (2 * k.val + 1)) 1 43) (shapeCast S16 (pair0_lt.sl.v2077_5 d L tab k r g1 g2 hR hin h4) hc16) = AccMath.accVec (rowF fl tab (wL L).val (2 * t1.val) (2 * k.val + 1)) (offF fl (wL L).val (2 * t1.val) (2 * k.val + 1)) 1 44 :=
      acc_step d L fl tab (wL L).val (2 * t1.val) (2 * k.val + 1) 1 _ (hRB _) ⟨43, by decide⟩ ⟨1, by decide⟩ _ rfl _ hwB_43 _ (k1_off47_form ⟨2, by decide⟩ _ _) _ hc16
    have sB1_44 : addf (AccMath.accVec (rowF fl tab (wL L).val (2 * t1.val) (2 * k.val + 1)) (offF fl (wL L).val (2 * t1.val) (2 * k.val + 1)) 1 44) (shapeCast S16 (pair0_lt.sl.v2113_5 d L tab k r g1 g2 hR hin h4) hc16) = AccMath.accVec (rowF fl tab (wL L).val (2 * t1.val) (2 * k.val + 1)) (offF fl (wL L).val (2 * t1.val) (2 * k.val + 1)) 1 45 :=
      acc_step d L fl tab (wL L).val (2 * t1.val) (2 * k.val + 1) 1 _ (hRB _) ⟨44, by decide⟩ ⟨1, by decide⟩ _ rfl _ hwB_44 _ (k1_off48_form ⟨2, by decide⟩ _ _) _ hc16
    have sB1_45 : addf (AccMath.accVec (rowF fl tab (wL L).val (2 * t1.val) (2 * k.val + 1)) (offF fl (wL L).val (2 * t1.val) (2 * k.val + 1)) 1 45) (shapeCast S16 (pair0_lt.sl.v2149_5 d L tab k r g1 g2 hR hin h4) hc16) = AccMath.accVec (rowF fl tab (wL L).val (2 * t1.val) (2 * k.val + 1)) (offF fl (wL L).val (2 * t1.val) (2 * k.val + 1)) 1 46 :=
      acc_step d L fl tab (wL L).val (2 * t1.val) (2 * k.val + 1) 1 _ (hRB _) ⟨45, by decide⟩ ⟨1, by decide⟩ _ rfl _ hwB_45 _ (k1_off49_form ⟨2, by decide⟩ _ _) _ hc16
    have sB1_46 : addf (AccMath.accVec (rowF fl tab (wL L).val (2 * t1.val) (2 * k.val + 1)) (offF fl (wL L).val (2 * t1.val) (2 * k.val + 1)) 1 46) (shapeCast S16 (pair0_lt.sl.v2185_5 d L tab k r g1 g2 hR hin h4) hc16) = AccMath.accVec (rowF fl tab (wL L).val (2 * t1.val) (2 * k.val + 1)) (offF fl (wL L).val (2 * t1.val) (2 * k.val + 1)) 1 47 :=
      acc_step d L fl tab (wL L).val (2 * t1.val) (2 * k.val + 1) 1 _ (hRB _) ⟨46, by decide⟩ ⟨1, by decide⟩ _ rfl _ hwB_46 _ (k1_off50_form ⟨2, by decide⟩ _ _) _ hc16
    have sB1_47 : addf (AccMath.accVec (rowF fl tab (wL L).val (2 * t1.val) (2 * k.val + 1)) (offF fl (wL L).val (2 * t1.val) (2 * k.val + 1)) 1 47) (shapeCast S16 (pair0_lt.sl.v2221_5 d L tab k r g1 g2 hR hin h4) hc16) = AccMath.accVec (rowF fl tab (wL L).val (2 * t1.val) (2 * k.val + 1)) (offF fl (wL L).val (2 * t1.val) (2 * k.val + 1)) 1 48 :=
      acc_step d L fl tab (wL L).val (2 * t1.val) (2 * k.val + 1) 1 _ (hRB _) ⟨47, by decide⟩ ⟨1, by decide⟩ _ rfl _ hwB_47 _ (k1_off51_form ⟨2, by decide⟩ _ _) _ hc16
    have sB1_48 : addf (AccMath.accVec (rowF fl tab (wL L).val (2 * t1.val) (2 * k.val + 1)) (offF fl (wL L).val (2 * t1.val) (2 * k.val + 1)) 1 48) (shapeCast S16 (pair0_lt.sl.v1586 d L tab k r g1 g2 hR hin h4) hc16) = AccMath.accVec (rowF fl tab (wL L).val (2 * t1.val) (2 * k.val + 1)) (offF fl (wL L).val (2 * t1.val) (2 * k.val + 1)) 1 49 :=
      acc_step d L fl tab (wL L).val (2 * t1.val) (2 * k.val + 1) 1 _ (hRB _) ⟨48, by decide⟩ ⟨1, by decide⟩ _ rfl _ hwB_48 _ (k1_off53_form _ _) _ hc16
    have sB1_49 : addf (AccMath.accVec (rowF fl tab (wL L).val (2 * t1.val) (2 * k.val + 1)) (offF fl (wL L).val (2 * t1.val) (2 * k.val + 1)) 1 49) (shapeCast S16 (pair0_lt.sl.v1620 d L tab k r g1 g2 hR hin h4) hc16) = AccMath.accVec (rowF fl tab (wL L).val (2 * t1.val) (2 * k.val + 1)) (offF fl (wL L).val (2 * t1.val) (2 * k.val + 1)) 1 50 :=
      acc_step d L fl tab (wL L).val (2 * t1.val) (2 * k.val + 1) 1 _ (hRB _) ⟨49, by decide⟩ ⟨1, by decide⟩ _ rfl _ hwB_49 _ (k1_off54_form _ _) _ hc16
    have hPB1 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val + 1)) (offF fl (wL L).val (2 * t1.val) (2 * k.val + 1)) 1 0) (shapeCast S16 (pair0_lt.sl.v1681_3 d L tab k r g1 g2 hR hin h4) hc16)) (shapeCast S16 (pair0_lt.sl.v1717_3 d L tab k r g1 g2 hR hin h4) hc16)) (shapeCast S16 (pair0_lt.sl.v1753_3 d L tab k r g1 g2 hR hin h4) hc16)) (shapeCast S16 (pair0_lt.sl.v1789_3 d L tab k r g1 g2 hR hin h4) hc16)) (shapeCast S16 (pair0_lt.sl.v1825_3 d L tab k r g1 g2 hR hin h4) hc16)) (shapeCast S16 (pair0_lt.sl.v1861_3 d L tab k r g1 g2 hR hin h4) hc16)) (shapeCast S16 (pair0_lt.sl.v1897_3 d L tab k r g1 g2 hR hin h4) hc16)) (shapeCast S16 (pair0_lt.sl.v1933_3 d L tab k r g1 g2 hR hin h4) hc16)) (shapeCast S16 (pair0_lt.sl.v1969_3 d L tab k r g1 g2 hR hin h4) hc16)) (shapeCast S16 (pair0_lt.sl.v2005_3 d L tab k r g1 g2 hR hin h4) hc16)) (shapeCast S16 (pair0_lt.sl.v2041_3 d L tab k r g1 g2 hR hin h4) hc16)) (shapeCast S16 (pair0_lt.sl.v2077_3 d L tab k r g1 g2 hR hin h4) hc16)) (shapeCast S16 (pair0_lt.sl.v2113_3 d L tab k r g1 g2 hR hin h4) hc16)) (shapeCast S16 (pair0_lt.sl.v2149_3 d L tab k r g1 g2 hR hin h4) hc16)) (shapeCast S16 (pair0_lt.sl.v2185_3 d L tab k r g1 g2 hR hin h4) hc16)) (shapeCast S16 (pair0_lt.sl.v2221_3 d L tab k r g1 g2 hR hin h4) hc16)) (shapeCast S16 (pair0_lt.sl.v1681_4 d L tab k r g1 g2 hR hin h4) hc16)) (shapeCast S16 (pair0_lt.sl.v1717_4 d L tab k r g1 g2 hR hin h4) hc16)) (shapeCast S16 (pair0_lt.sl.v1753_4 d L tab k r g1 g2 hR hin h4) hc16)) (shapeCast S16 (pair0_lt.sl.v1789_4 d L tab k r g1 g2 hR hin h4) hc16)) (shapeCast S16 (pair0_lt.sl.v1825_4 d L tab k r g1 g2 hR hin h4) hc16)) (shapeCast S16 (pair0_lt.sl.v1861_4 d L tab k r g1 g2 hR hin h4) hc16)) (shapeCast S16 (pair0_lt.sl.v1897_4 d L tab k r g1 g2 hR hin h4) hc16)) (shapeCast S16 (pair0_lt.sl.v1933_4 d L tab k r g1 g2 hR hin h4) hc16)) (shapeCast S16 (pair0_lt.sl.v1969_4 d L tab k r g1 g2 hR hin h4) hc16)) (shapeCast S16 (pair0_lt.sl.v2005_4 d L tab k r g1 g2 hR hin h4) hc16)) (shapeCast S16 (pair0_lt.sl.v2041_4 d L tab k r g1 g2 hR hin h4) hc16)) (shapeCast S16 (pair0_lt.sl.v2077_4 d L tab k r g1 g2 hR hin h4) hc16)) (shapeCast S16 (pair0_lt.sl.v2113_4 d L tab k r g1 g2 hR hin h4) hc16)) (shapeCast S16 (pair0_lt.sl.v2149_4 d L tab k r g1 g2 hR hin h4) hc16)) (shapeCast S16 (pair0_lt.sl.v2185_4 d L tab k r g1 g2 hR hin h4) hc16)) (shapeCast S16 (pair0_lt.sl.v2221_4 d L tab k r g1 g2 hR hin h4) hc16)) (shapeCast S16 (pair0_lt.sl.v1681_5 d L tab k r g1 g2 hR hin h4) hc16)) (shapeCast S16 (pair0_lt.sl.v1717_5 d L tab k r g1 g2 hR hin h4) hc16)) (shapeCast S16 (pair0_lt.sl.v1753_5 d L tab k r g1 g2 hR hin h4) hc16)) (shapeCast S16 (pair0_lt.sl.v1789_5 d L tab k r g1 g2 hR hin h4) hc16)) (shapeCast S16 (pair0_lt.sl.v1825_5 d L tab k r g1 g2 hR hin h4) hc16)) (shapeCast S16 (pair0_lt.sl.v1861_5 d L tab k r g1 g2 hR hin h4) hc16)) (shapeCast S16 (pair0_lt.sl.v1897_5 d L tab k r g1 g2 hR hin h4) hc16)) (shapeCast S16 (pair0_lt.sl.v1933_5 d L tab k r g1 g2 hR hin h4) hc16)) (shapeCast S16 (pair0_lt.sl.v1969_5 d L tab k r g1 g2 hR hin h4) hc16)) (shapeCast S16 (pair0_lt.sl.v2005_5 d L tab k r g1 g2 hR hin h4) hc16)) (shapeCast S16 (pair0_lt.sl.v2041_5 d L tab k r g1 g2 hR hin h4) hc16)) (shapeCast S16 (pair0_lt.sl.v2077_5 d L tab k r g1 g2 hR hin h4) hc16)) (shapeCast S16 (pair0_lt.sl.v2113_5 d L tab k r g1 g2 hR hin h4) hc16)) (shapeCast S16 (pair0_lt.sl.v2149_5 d L tab k r g1 g2 hR hin h4) hc16)) (shapeCast S16 (pair0_lt.sl.v2185_5 d L tab k r g1 g2 hR hin h4) hc16)) (shapeCast S16 (pair0_lt.sl.v2221_5 d L tab k r g1 g2 hR hin h4) hc16)) (shapeCast S16 (pair0_lt.sl.v1586 d L tab k r g1 g2 hR hin h4) hc16)) (shapeCast S16 (pair0_lt.sl.v1620 d L tab k r g1 g2 hR hin h4) hc16)) hc1 x = Spec.bagPartial fl tab (128 * (wL L).val + 16 * (2 * t1.val) + (2 * k.val + 1)) (16 * 1 + (x 2).val) 50 := fun x => by
      rw [sB1_0, sB1_1, sB1_2, sB1_3, sB1_4, sB1_5, sB1_6, sB1_7, sB1_8, sB1_9, sB1_10, sB1_11, sB1_12, sB1_13, sB1_14, sB1_15, sB1_16, sB1_17, sB1_18, sB1_19, sB1_20, sB1_21, sB1_22, sB1_23, sB1_24, sB1_25, sB1_26, sB1_27, sB1_28, sB1_29, sB1_30, sB1_31, sB1_32, sB1_33, sB1_34, sB1_35, sB1_36, sB1_37, sB1_38, sB1_39, sB1_40, sB1_41, sB1_42, sB1_43, sB1_44, sB1_45, sB1_46, sB1_47, sB1_48, sB1_49]; exact payload_ok fl tab (wL L).val (2 * t1.val) (2 * k.val + 1) ⟨1, by decide⟩ hc1 x
    have sB2_0 : addf (AccMath.accVec (rowF fl tab (wL L).val (2 * t1.val) (2 * k.val + 1)) (offF fl (wL L).val (2 * t1.val) (2 * k.val + 1)) 2 0) (shapeCast S16 (pair0_lt.sl.v1689_3 d L tab k r g1 g2 hR hin h4) hc16) = AccMath.accVec (rowF fl tab (wL L).val (2 * t1.val) (2 * k.val + 1)) (offF fl (wL L).val (2 * t1.val) (2 * k.val + 1)) 2 1 :=
      acc_step d L fl tab (wL L).val (2 * t1.val) (2 * k.val + 1) 1 _ (hRB _) ⟨0, by decide⟩ ⟨2, by decide⟩ _ rfl _ hwB_0 _ (k1_off36_form ⟨0, by decide⟩ _ _) _ hc16
    have sB2_1 : addf (AccMath.accVec (rowF fl tab (wL L).val (2 * t1.val) (2 * k.val + 1)) (offF fl (wL L).val (2 * t1.val) (2 * k.val + 1)) 2 1) (shapeCast S16 (pair0_lt.sl.v1725_3 d L tab k r g1 g2 hR hin h4) hc16) = AccMath.accVec (rowF fl tab (wL L).val (2 * t1.val) (2 * k.val + 1)) (offF fl (wL L).val (2 * t1.val) (2 * k.val + 1)) 2 2 :=
      acc_step d L fl tab (wL L).val (2 * t1.val) (2 * k.val + 1) 1 _ (hRB _) ⟨1, by decide⟩ ⟨2, by decide⟩ _ rfl _ hwB_1 _ (k1_off37_form ⟨0, by decide⟩ _ _) _ hc16
    have sB2_2 : addf (AccMath.accVec (rowF fl tab (wL L).val (2 * t1.val) (2 * k.val + 1)) (offF fl (wL L).val (2 * t1.val) (2 * k.val + 1)) 2 2) (shapeCast S16 (pair0_lt.sl.v1761_3 d L tab k r g1 g2 hR hin h4) hc16) = AccMath.accVec (rowF fl tab (wL L).val (2 * t1.val) (2 * k.val + 1)) (offF fl (wL L).val (2 * t1.val) (2 * k.val + 1)) 2 3 :=
      acc_step d L fl tab (wL L).val (2 * t1.val) (2 * k.val + 1) 1 _ (hRB _) ⟨2, by decide⟩ ⟨2, by decide⟩ _ rfl _ hwB_2 _ (k1_off38_form ⟨0, by decide⟩ _ _) _ hc16
    have sB2_3 : addf (AccMath.accVec (rowF fl tab (wL L).val (2 * t1.val) (2 * k.val + 1)) (offF fl (wL L).val (2 * t1.val) (2 * k.val + 1)) 2 3) (shapeCast S16 (pair0_lt.sl.v1797_3 d L tab k r g1 g2 hR hin h4) hc16) = AccMath.accVec (rowF fl tab (wL L).val (2 * t1.val) (2 * k.val + 1)) (offF fl (wL L).val (2 * t1.val) (2 * k.val + 1)) 2 4 :=
      acc_step d L fl tab (wL L).val (2 * t1.val) (2 * k.val + 1) 1 _ (hRB _) ⟨3, by decide⟩ ⟨2, by decide⟩ _ rfl _ hwB_3 _ (k1_off39_form ⟨0, by decide⟩ _ _) _ hc16
    have sB2_4 : addf (AccMath.accVec (rowF fl tab (wL L).val (2 * t1.val) (2 * k.val + 1)) (offF fl (wL L).val (2 * t1.val) (2 * k.val + 1)) 2 4) (shapeCast S16 (pair0_lt.sl.v1833_3 d L tab k r g1 g2 hR hin h4) hc16) = AccMath.accVec (rowF fl tab (wL L).val (2 * t1.val) (2 * k.val + 1)) (offF fl (wL L).val (2 * t1.val) (2 * k.val + 1)) 2 5 :=
      acc_step d L fl tab (wL L).val (2 * t1.val) (2 * k.val + 1) 1 _ (hRB _) ⟨4, by decide⟩ ⟨2, by decide⟩ _ rfl _ hwB_4 _ (k1_off40_form ⟨0, by decide⟩ _ _) _ hc16
    have sB2_5 : addf (AccMath.accVec (rowF fl tab (wL L).val (2 * t1.val) (2 * k.val + 1)) (offF fl (wL L).val (2 * t1.val) (2 * k.val + 1)) 2 5) (shapeCast S16 (pair0_lt.sl.v1869_3 d L tab k r g1 g2 hR hin h4) hc16) = AccMath.accVec (rowF fl tab (wL L).val (2 * t1.val) (2 * k.val + 1)) (offF fl (wL L).val (2 * t1.val) (2 * k.val + 1)) 2 6 :=
      acc_step d L fl tab (wL L).val (2 * t1.val) (2 * k.val + 1) 1 _ (hRB _) ⟨5, by decide⟩ ⟨2, by decide⟩ _ rfl _ hwB_5 _ (k1_off41_form ⟨0, by decide⟩ _ _) _ hc16
    have sB2_6 : addf (AccMath.accVec (rowF fl tab (wL L).val (2 * t1.val) (2 * k.val + 1)) (offF fl (wL L).val (2 * t1.val) (2 * k.val + 1)) 2 6) (shapeCast S16 (pair0_lt.sl.v1905_3 d L tab k r g1 g2 hR hin h4) hc16) = AccMath.accVec (rowF fl tab (wL L).val (2 * t1.val) (2 * k.val + 1)) (offF fl (wL L).val (2 * t1.val) (2 * k.val + 1)) 2 7 :=
      acc_step d L fl tab (wL L).val (2 * t1.val) (2 * k.val + 1) 1 _ (hRB _) ⟨6, by decide⟩ ⟨2, by decide⟩ _ rfl _ hwB_6 _ (k1_off42_form ⟨0, by decide⟩ _ _) _ hc16
    have sB2_7 : addf (AccMath.accVec (rowF fl tab (wL L).val (2 * t1.val) (2 * k.val + 1)) (offF fl (wL L).val (2 * t1.val) (2 * k.val + 1)) 2 7) (shapeCast S16 (pair0_lt.sl.v1941_3 d L tab k r g1 g2 hR hin h4) hc16) = AccMath.accVec (rowF fl tab (wL L).val (2 * t1.val) (2 * k.val + 1)) (offF fl (wL L).val (2 * t1.val) (2 * k.val + 1)) 2 8 :=
      acc_step d L fl tab (wL L).val (2 * t1.val) (2 * k.val + 1) 1 _ (hRB _) ⟨7, by decide⟩ ⟨2, by decide⟩ _ rfl _ hwB_7 _ (k1_off43_form ⟨0, by decide⟩ _ _) _ hc16
    have sB2_8 : addf (AccMath.accVec (rowF fl tab (wL L).val (2 * t1.val) (2 * k.val + 1)) (offF fl (wL L).val (2 * t1.val) (2 * k.val + 1)) 2 8) (shapeCast S16 (pair0_lt.sl.v1977_3 d L tab k r g1 g2 hR hin h4) hc16) = AccMath.accVec (rowF fl tab (wL L).val (2 * t1.val) (2 * k.val + 1)) (offF fl (wL L).val (2 * t1.val) (2 * k.val + 1)) 2 9 :=
      acc_step d L fl tab (wL L).val (2 * t1.val) (2 * k.val + 1) 1 _ (hRB _) ⟨8, by decide⟩ ⟨2, by decide⟩ _ rfl _ hwB_8 _ (k1_off44_form ⟨0, by decide⟩ _ _) _ hc16
    have sB2_9 : addf (AccMath.accVec (rowF fl tab (wL L).val (2 * t1.val) (2 * k.val + 1)) (offF fl (wL L).val (2 * t1.val) (2 * k.val + 1)) 2 9) (shapeCast S16 (pair0_lt.sl.v2013_3 d L tab k r g1 g2 hR hin h4) hc16) = AccMath.accVec (rowF fl tab (wL L).val (2 * t1.val) (2 * k.val + 1)) (offF fl (wL L).val (2 * t1.val) (2 * k.val + 1)) 2 10 :=
      acc_step d L fl tab (wL L).val (2 * t1.val) (2 * k.val + 1) 1 _ (hRB _) ⟨9, by decide⟩ ⟨2, by decide⟩ _ rfl _ hwB_9 _ (k1_off45_form ⟨0, by decide⟩ _ _) _ hc16
    have sB2_10 : addf (AccMath.accVec (rowF fl tab (wL L).val (2 * t1.val) (2 * k.val + 1)) (offF fl (wL L).val (2 * t1.val) (2 * k.val + 1)) 2 10) (shapeCast S16 (pair0_lt.sl.v2049_3 d L tab k r g1 g2 hR hin h4) hc16) = AccMath.accVec (rowF fl tab (wL L).val (2 * t1.val) (2 * k.val + 1)) (offF fl (wL L).val (2 * t1.val) (2 * k.val + 1)) 2 11 :=
      acc_step d L fl tab (wL L).val (2 * t1.val) (2 * k.val + 1) 1 _ (hRB _) ⟨10, by decide⟩ ⟨2, by decide⟩ _ rfl _ hwB_10 _ (k1_off46_form ⟨0, by decide⟩ _ _) _ hc16
    have sB2_11 : addf (AccMath.accVec (rowF fl tab (wL L).val (2 * t1.val) (2 * k.val + 1)) (offF fl (wL L).val (2 * t1.val) (2 * k.val + 1)) 2 11) (shapeCast S16 (pair0_lt.sl.v2085_3 d L tab k r g1 g2 hR hin h4) hc16) = AccMath.accVec (rowF fl tab (wL L).val (2 * t1.val) (2 * k.val + 1)) (offF fl (wL L).val (2 * t1.val) (2 * k.val + 1)) 2 12 :=
      acc_step d L fl tab (wL L).val (2 * t1.val) (2 * k.val + 1) 1 _ (hRB _) ⟨11, by decide⟩ ⟨2, by decide⟩ _ rfl _ hwB_11 _ (k1_off47_form ⟨0, by decide⟩ _ _) _ hc16
    have sB2_12 : addf (AccMath.accVec (rowF fl tab (wL L).val (2 * t1.val) (2 * k.val + 1)) (offF fl (wL L).val (2 * t1.val) (2 * k.val + 1)) 2 12) (shapeCast S16 (pair0_lt.sl.v2121_3 d L tab k r g1 g2 hR hin h4) hc16) = AccMath.accVec (rowF fl tab (wL L).val (2 * t1.val) (2 * k.val + 1)) (offF fl (wL L).val (2 * t1.val) (2 * k.val + 1)) 2 13 :=
      acc_step d L fl tab (wL L).val (2 * t1.val) (2 * k.val + 1) 1 _ (hRB _) ⟨12, by decide⟩ ⟨2, by decide⟩ _ rfl _ hwB_12 _ (k1_off48_form ⟨0, by decide⟩ _ _) _ hc16
    have sB2_13 : addf (AccMath.accVec (rowF fl tab (wL L).val (2 * t1.val) (2 * k.val + 1)) (offF fl (wL L).val (2 * t1.val) (2 * k.val + 1)) 2 13) (shapeCast S16 (pair0_lt.sl.v2157_3 d L tab k r g1 g2 hR hin h4) hc16) = AccMath.accVec (rowF fl tab (wL L).val (2 * t1.val) (2 * k.val + 1)) (offF fl (wL L).val (2 * t1.val) (2 * k.val + 1)) 2 14 :=
      acc_step d L fl tab (wL L).val (2 * t1.val) (2 * k.val + 1) 1 _ (hRB _) ⟨13, by decide⟩ ⟨2, by decide⟩ _ rfl _ hwB_13 _ (k1_off49_form ⟨0, by decide⟩ _ _) _ hc16
    have sB2_14 : addf (AccMath.accVec (rowF fl tab (wL L).val (2 * t1.val) (2 * k.val + 1)) (offF fl (wL L).val (2 * t1.val) (2 * k.val + 1)) 2 14) (shapeCast S16 (pair0_lt.sl.v2193_3 d L tab k r g1 g2 hR hin h4) hc16) = AccMath.accVec (rowF fl tab (wL L).val (2 * t1.val) (2 * k.val + 1)) (offF fl (wL L).val (2 * t1.val) (2 * k.val + 1)) 2 15 :=
      acc_step d L fl tab (wL L).val (2 * t1.val) (2 * k.val + 1) 1 _ (hRB _) ⟨14, by decide⟩ ⟨2, by decide⟩ _ rfl _ hwB_14 _ (k1_off50_form ⟨0, by decide⟩ _ _) _ hc16
    have sB2_15 : addf (AccMath.accVec (rowF fl tab (wL L).val (2 * t1.val) (2 * k.val + 1)) (offF fl (wL L).val (2 * t1.val) (2 * k.val + 1)) 2 15) (shapeCast S16 (pair0_lt.sl.v2229_3 d L tab k r g1 g2 hR hin h4) hc16) = AccMath.accVec (rowF fl tab (wL L).val (2 * t1.val) (2 * k.val + 1)) (offF fl (wL L).val (2 * t1.val) (2 * k.val + 1)) 2 16 :=
      acc_step d L fl tab (wL L).val (2 * t1.val) (2 * k.val + 1) 1 _ (hRB _) ⟨15, by decide⟩ ⟨2, by decide⟩ _ rfl _ hwB_15 _ (k1_off51_form ⟨0, by decide⟩ _ _) _ hc16
    have sB2_16 : addf (AccMath.accVec (rowF fl tab (wL L).val (2 * t1.val) (2 * k.val + 1)) (offF fl (wL L).val (2 * t1.val) (2 * k.val + 1)) 2 16) (shapeCast S16 (pair0_lt.sl.v1689_4 d L tab k r g1 g2 hR hin h4) hc16) = AccMath.accVec (rowF fl tab (wL L).val (2 * t1.val) (2 * k.val + 1)) (offF fl (wL L).val (2 * t1.val) (2 * k.val + 1)) 2 17 :=
      acc_step d L fl tab (wL L).val (2 * t1.val) (2 * k.val + 1) 1 _ (hRB _) ⟨16, by decide⟩ ⟨2, by decide⟩ _ rfl _ hwB_16 _ (k1_off36_form ⟨1, by decide⟩ _ _) _ hc16
    have sB2_17 : addf (AccMath.accVec (rowF fl tab (wL L).val (2 * t1.val) (2 * k.val + 1)) (offF fl (wL L).val (2 * t1.val) (2 * k.val + 1)) 2 17) (shapeCast S16 (pair0_lt.sl.v1725_4 d L tab k r g1 g2 hR hin h4) hc16) = AccMath.accVec (rowF fl tab (wL L).val (2 * t1.val) (2 * k.val + 1)) (offF fl (wL L).val (2 * t1.val) (2 * k.val + 1)) 2 18 :=
      acc_step d L fl tab (wL L).val (2 * t1.val) (2 * k.val + 1) 1 _ (hRB _) ⟨17, by decide⟩ ⟨2, by decide⟩ _ rfl _ hwB_17 _ (k1_off37_form ⟨1, by decide⟩ _ _) _ hc16
    have sB2_18 : addf (AccMath.accVec (rowF fl tab (wL L).val (2 * t1.val) (2 * k.val + 1)) (offF fl (wL L).val (2 * t1.val) (2 * k.val + 1)) 2 18) (shapeCast S16 (pair0_lt.sl.v1761_4 d L tab k r g1 g2 hR hin h4) hc16) = AccMath.accVec (rowF fl tab (wL L).val (2 * t1.val) (2 * k.val + 1)) (offF fl (wL L).val (2 * t1.val) (2 * k.val + 1)) 2 19 :=
      acc_step d L fl tab (wL L).val (2 * t1.val) (2 * k.val + 1) 1 _ (hRB _) ⟨18, by decide⟩ ⟨2, by decide⟩ _ rfl _ hwB_18 _ (k1_off38_form ⟨1, by decide⟩ _ _) _ hc16
    have sB2_19 : addf (AccMath.accVec (rowF fl tab (wL L).val (2 * t1.val) (2 * k.val + 1)) (offF fl (wL L).val (2 * t1.val) (2 * k.val + 1)) 2 19) (shapeCast S16 (pair0_lt.sl.v1797_4 d L tab k r g1 g2 hR hin h4) hc16) = AccMath.accVec (rowF fl tab (wL L).val (2 * t1.val) (2 * k.val + 1)) (offF fl (wL L).val (2 * t1.val) (2 * k.val + 1)) 2 20 :=
      acc_step d L fl tab (wL L).val (2 * t1.val) (2 * k.val + 1) 1 _ (hRB _) ⟨19, by decide⟩ ⟨2, by decide⟩ _ rfl _ hwB_19 _ (k1_off39_form ⟨1, by decide⟩ _ _) _ hc16
    have sB2_20 : addf (AccMath.accVec (rowF fl tab (wL L).val (2 * t1.val) (2 * k.val + 1)) (offF fl (wL L).val (2 * t1.val) (2 * k.val + 1)) 2 20) (shapeCast S16 (pair0_lt.sl.v1833_4 d L tab k r g1 g2 hR hin h4) hc16) = AccMath.accVec (rowF fl tab (wL L).val (2 * t1.val) (2 * k.val + 1)) (offF fl (wL L).val (2 * t1.val) (2 * k.val + 1)) 2 21 :=
      acc_step d L fl tab (wL L).val (2 * t1.val) (2 * k.val + 1) 1 _ (hRB _) ⟨20, by decide⟩ ⟨2, by decide⟩ _ rfl _ hwB_20 _ (k1_off40_form ⟨1, by decide⟩ _ _) _ hc16
    have sB2_21 : addf (AccMath.accVec (rowF fl tab (wL L).val (2 * t1.val) (2 * k.val + 1)) (offF fl (wL L).val (2 * t1.val) (2 * k.val + 1)) 2 21) (shapeCast S16 (pair0_lt.sl.v1869_4 d L tab k r g1 g2 hR hin h4) hc16) = AccMath.accVec (rowF fl tab (wL L).val (2 * t1.val) (2 * k.val + 1)) (offF fl (wL L).val (2 * t1.val) (2 * k.val + 1)) 2 22 :=
      acc_step d L fl tab (wL L).val (2 * t1.val) (2 * k.val + 1) 1 _ (hRB _) ⟨21, by decide⟩ ⟨2, by decide⟩ _ rfl _ hwB_21 _ (k1_off41_form ⟨1, by decide⟩ _ _) _ hc16
    have sB2_22 : addf (AccMath.accVec (rowF fl tab (wL L).val (2 * t1.val) (2 * k.val + 1)) (offF fl (wL L).val (2 * t1.val) (2 * k.val + 1)) 2 22) (shapeCast S16 (pair0_lt.sl.v1905_4 d L tab k r g1 g2 hR hin h4) hc16) = AccMath.accVec (rowF fl tab (wL L).val (2 * t1.val) (2 * k.val + 1)) (offF fl (wL L).val (2 * t1.val) (2 * k.val + 1)) 2 23 :=
      acc_step d L fl tab (wL L).val (2 * t1.val) (2 * k.val + 1) 1 _ (hRB _) ⟨22, by decide⟩ ⟨2, by decide⟩ _ rfl _ hwB_22 _ (k1_off42_form ⟨1, by decide⟩ _ _) _ hc16
    have sB2_23 : addf (AccMath.accVec (rowF fl tab (wL L).val (2 * t1.val) (2 * k.val + 1)) (offF fl (wL L).val (2 * t1.val) (2 * k.val + 1)) 2 23) (shapeCast S16 (pair0_lt.sl.v1941_4 d L tab k r g1 g2 hR hin h4) hc16) = AccMath.accVec (rowF fl tab (wL L).val (2 * t1.val) (2 * k.val + 1)) (offF fl (wL L).val (2 * t1.val) (2 * k.val + 1)) 2 24 :=
      acc_step d L fl tab (wL L).val (2 * t1.val) (2 * k.val + 1) 1 _ (hRB _) ⟨23, by decide⟩ ⟨2, by decide⟩ _ rfl _ hwB_23 _ (k1_off43_form ⟨1, by decide⟩ _ _) _ hc16
    have sB2_24 : addf (AccMath.accVec (rowF fl tab (wL L).val (2 * t1.val) (2 * k.val + 1)) (offF fl (wL L).val (2 * t1.val) (2 * k.val + 1)) 2 24) (shapeCast S16 (pair0_lt.sl.v1977_4 d L tab k r g1 g2 hR hin h4) hc16) = AccMath.accVec (rowF fl tab (wL L).val (2 * t1.val) (2 * k.val + 1)) (offF fl (wL L).val (2 * t1.val) (2 * k.val + 1)) 2 25 :=
      acc_step d L fl tab (wL L).val (2 * t1.val) (2 * k.val + 1) 1 _ (hRB _) ⟨24, by decide⟩ ⟨2, by decide⟩ _ rfl _ hwB_24 _ (k1_off44_form ⟨1, by decide⟩ _ _) _ hc16
    have sB2_25 : addf (AccMath.accVec (rowF fl tab (wL L).val (2 * t1.val) (2 * k.val + 1)) (offF fl (wL L).val (2 * t1.val) (2 * k.val + 1)) 2 25) (shapeCast S16 (pair0_lt.sl.v2013_4 d L tab k r g1 g2 hR hin h4) hc16) = AccMath.accVec (rowF fl tab (wL L).val (2 * t1.val) (2 * k.val + 1)) (offF fl (wL L).val (2 * t1.val) (2 * k.val + 1)) 2 26 :=
      acc_step d L fl tab (wL L).val (2 * t1.val) (2 * k.val + 1) 1 _ (hRB _) ⟨25, by decide⟩ ⟨2, by decide⟩ _ rfl _ hwB_25 _ (k1_off45_form ⟨1, by decide⟩ _ _) _ hc16
    have sB2_26 : addf (AccMath.accVec (rowF fl tab (wL L).val (2 * t1.val) (2 * k.val + 1)) (offF fl (wL L).val (2 * t1.val) (2 * k.val + 1)) 2 26) (shapeCast S16 (pair0_lt.sl.v2049_4 d L tab k r g1 g2 hR hin h4) hc16) = AccMath.accVec (rowF fl tab (wL L).val (2 * t1.val) (2 * k.val + 1)) (offF fl (wL L).val (2 * t1.val) (2 * k.val + 1)) 2 27 :=
      acc_step d L fl tab (wL L).val (2 * t1.val) (2 * k.val + 1) 1 _ (hRB _) ⟨26, by decide⟩ ⟨2, by decide⟩ _ rfl _ hwB_26 _ (k1_off46_form ⟨1, by decide⟩ _ _) _ hc16
    have sB2_27 : addf (AccMath.accVec (rowF fl tab (wL L).val (2 * t1.val) (2 * k.val + 1)) (offF fl (wL L).val (2 * t1.val) (2 * k.val + 1)) 2 27) (shapeCast S16 (pair0_lt.sl.v2085_4 d L tab k r g1 g2 hR hin h4) hc16) = AccMath.accVec (rowF fl tab (wL L).val (2 * t1.val) (2 * k.val + 1)) (offF fl (wL L).val (2 * t1.val) (2 * k.val + 1)) 2 28 :=
      acc_step d L fl tab (wL L).val (2 * t1.val) (2 * k.val + 1) 1 _ (hRB _) ⟨27, by decide⟩ ⟨2, by decide⟩ _ rfl _ hwB_27 _ (k1_off47_form ⟨1, by decide⟩ _ _) _ hc16
    have sB2_28 : addf (AccMath.accVec (rowF fl tab (wL L).val (2 * t1.val) (2 * k.val + 1)) (offF fl (wL L).val (2 * t1.val) (2 * k.val + 1)) 2 28) (shapeCast S16 (pair0_lt.sl.v2121_4 d L tab k r g1 g2 hR hin h4) hc16) = AccMath.accVec (rowF fl tab (wL L).val (2 * t1.val) (2 * k.val + 1)) (offF fl (wL L).val (2 * t1.val) (2 * k.val + 1)) 2 29 :=
      acc_step d L fl tab (wL L).val (2 * t1.val) (2 * k.val + 1) 1 _ (hRB _) ⟨28, by decide⟩ ⟨2, by decide⟩ _ rfl _ hwB_28 _ (k1_off48_form ⟨1, by decide⟩ _ _) _ hc16
    have sB2_29 : addf (AccMath.accVec (rowF fl tab (wL L).val (2 * t1.val) (2 * k.val + 1)) (offF fl (wL L).val (2 * t1.val) (2 * k.val + 1)) 2 29) (shapeCast S16 (pair0_lt.sl.v2157_4 d L tab k r g1 g2 hR hin h4) hc16) = AccMath.accVec (rowF fl tab (wL L).val (2 * t1.val) (2 * k.val + 1)) (offF fl (wL L).val (2 * t1.val) (2 * k.val + 1)) 2 30 :=
      acc_step d L fl tab (wL L).val (2 * t1.val) (2 * k.val + 1) 1 _ (hRB _) ⟨29, by decide⟩ ⟨2, by decide⟩ _ rfl _ hwB_29 _ (k1_off49_form ⟨1, by decide⟩ _ _) _ hc16
    have sB2_30 : addf (AccMath.accVec (rowF fl tab (wL L).val (2 * t1.val) (2 * k.val + 1)) (offF fl (wL L).val (2 * t1.val) (2 * k.val + 1)) 2 30) (shapeCast S16 (pair0_lt.sl.v2193_4 d L tab k r g1 g2 hR hin h4) hc16) = AccMath.accVec (rowF fl tab (wL L).val (2 * t1.val) (2 * k.val + 1)) (offF fl (wL L).val (2 * t1.val) (2 * k.val + 1)) 2 31 :=
      acc_step d L fl tab (wL L).val (2 * t1.val) (2 * k.val + 1) 1 _ (hRB _) ⟨30, by decide⟩ ⟨2, by decide⟩ _ rfl _ hwB_30 _ (k1_off50_form ⟨1, by decide⟩ _ _) _ hc16
    have sB2_31 : addf (AccMath.accVec (rowF fl tab (wL L).val (2 * t1.val) (2 * k.val + 1)) (offF fl (wL L).val (2 * t1.val) (2 * k.val + 1)) 2 31) (shapeCast S16 (pair0_lt.sl.v2229_4 d L tab k r g1 g2 hR hin h4) hc16) = AccMath.accVec (rowF fl tab (wL L).val (2 * t1.val) (2 * k.val + 1)) (offF fl (wL L).val (2 * t1.val) (2 * k.val + 1)) 2 32 :=
      acc_step d L fl tab (wL L).val (2 * t1.val) (2 * k.val + 1) 1 _ (hRB _) ⟨31, by decide⟩ ⟨2, by decide⟩ _ rfl _ hwB_31 _ (k1_off51_form ⟨1, by decide⟩ _ _) _ hc16
    have sB2_32 : addf (AccMath.accVec (rowF fl tab (wL L).val (2 * t1.val) (2 * k.val + 1)) (offF fl (wL L).val (2 * t1.val) (2 * k.val + 1)) 2 32) (shapeCast S16 (pair0_lt.sl.v1689_5 d L tab k r g1 g2 hR hin h4) hc16) = AccMath.accVec (rowF fl tab (wL L).val (2 * t1.val) (2 * k.val + 1)) (offF fl (wL L).val (2 * t1.val) (2 * k.val + 1)) 2 33 :=
      acc_step d L fl tab (wL L).val (2 * t1.val) (2 * k.val + 1) 1 _ (hRB _) ⟨32, by decide⟩ ⟨2, by decide⟩ _ rfl _ hwB_32 _ (k1_off36_form ⟨2, by decide⟩ _ _) _ hc16
    have sB2_33 : addf (AccMath.accVec (rowF fl tab (wL L).val (2 * t1.val) (2 * k.val + 1)) (offF fl (wL L).val (2 * t1.val) (2 * k.val + 1)) 2 33) (shapeCast S16 (pair0_lt.sl.v1725_5 d L tab k r g1 g2 hR hin h4) hc16) = AccMath.accVec (rowF fl tab (wL L).val (2 * t1.val) (2 * k.val + 1)) (offF fl (wL L).val (2 * t1.val) (2 * k.val + 1)) 2 34 :=
      acc_step d L fl tab (wL L).val (2 * t1.val) (2 * k.val + 1) 1 _ (hRB _) ⟨33, by decide⟩ ⟨2, by decide⟩ _ rfl _ hwB_33 _ (k1_off37_form ⟨2, by decide⟩ _ _) _ hc16
    have sB2_34 : addf (AccMath.accVec (rowF fl tab (wL L).val (2 * t1.val) (2 * k.val + 1)) (offF fl (wL L).val (2 * t1.val) (2 * k.val + 1)) 2 34) (shapeCast S16 (pair0_lt.sl.v1761_5 d L tab k r g1 g2 hR hin h4) hc16) = AccMath.accVec (rowF fl tab (wL L).val (2 * t1.val) (2 * k.val + 1)) (offF fl (wL L).val (2 * t1.val) (2 * k.val + 1)) 2 35 :=
      acc_step d L fl tab (wL L).val (2 * t1.val) (2 * k.val + 1) 1 _ (hRB _) ⟨34, by decide⟩ ⟨2, by decide⟩ _ rfl _ hwB_34 _ (k1_off38_form ⟨2, by decide⟩ _ _) _ hc16
    have sB2_35 : addf (AccMath.accVec (rowF fl tab (wL L).val (2 * t1.val) (2 * k.val + 1)) (offF fl (wL L).val (2 * t1.val) (2 * k.val + 1)) 2 35) (shapeCast S16 (pair0_lt.sl.v1797_5 d L tab k r g1 g2 hR hin h4) hc16) = AccMath.accVec (rowF fl tab (wL L).val (2 * t1.val) (2 * k.val + 1)) (offF fl (wL L).val (2 * t1.val) (2 * k.val + 1)) 2 36 :=
      acc_step d L fl tab (wL L).val (2 * t1.val) (2 * k.val + 1) 1 _ (hRB _) ⟨35, by decide⟩ ⟨2, by decide⟩ _ rfl _ hwB_35 _ (k1_off39_form ⟨2, by decide⟩ _ _) _ hc16
    have sB2_36 : addf (AccMath.accVec (rowF fl tab (wL L).val (2 * t1.val) (2 * k.val + 1)) (offF fl (wL L).val (2 * t1.val) (2 * k.val + 1)) 2 36) (shapeCast S16 (pair0_lt.sl.v1833_5 d L tab k r g1 g2 hR hin h4) hc16) = AccMath.accVec (rowF fl tab (wL L).val (2 * t1.val) (2 * k.val + 1)) (offF fl (wL L).val (2 * t1.val) (2 * k.val + 1)) 2 37 :=
      acc_step d L fl tab (wL L).val (2 * t1.val) (2 * k.val + 1) 1 _ (hRB _) ⟨36, by decide⟩ ⟨2, by decide⟩ _ rfl _ hwB_36 _ (k1_off40_form ⟨2, by decide⟩ _ _) _ hc16
    have sB2_37 : addf (AccMath.accVec (rowF fl tab (wL L).val (2 * t1.val) (2 * k.val + 1)) (offF fl (wL L).val (2 * t1.val) (2 * k.val + 1)) 2 37) (shapeCast S16 (pair0_lt.sl.v1869_5 d L tab k r g1 g2 hR hin h4) hc16) = AccMath.accVec (rowF fl tab (wL L).val (2 * t1.val) (2 * k.val + 1)) (offF fl (wL L).val (2 * t1.val) (2 * k.val + 1)) 2 38 :=
      acc_step d L fl tab (wL L).val (2 * t1.val) (2 * k.val + 1) 1 _ (hRB _) ⟨37, by decide⟩ ⟨2, by decide⟩ _ rfl _ hwB_37 _ (k1_off41_form ⟨2, by decide⟩ _ _) _ hc16
    have sB2_38 : addf (AccMath.accVec (rowF fl tab (wL L).val (2 * t1.val) (2 * k.val + 1)) (offF fl (wL L).val (2 * t1.val) (2 * k.val + 1)) 2 38) (shapeCast S16 (pair0_lt.sl.v1905_5 d L tab k r g1 g2 hR hin h4) hc16) = AccMath.accVec (rowF fl tab (wL L).val (2 * t1.val) (2 * k.val + 1)) (offF fl (wL L).val (2 * t1.val) (2 * k.val + 1)) 2 39 :=
      acc_step d L fl tab (wL L).val (2 * t1.val) (2 * k.val + 1) 1 _ (hRB _) ⟨38, by decide⟩ ⟨2, by decide⟩ _ rfl _ hwB_38 _ (k1_off42_form ⟨2, by decide⟩ _ _) _ hc16
    have sB2_39 : addf (AccMath.accVec (rowF fl tab (wL L).val (2 * t1.val) (2 * k.val + 1)) (offF fl (wL L).val (2 * t1.val) (2 * k.val + 1)) 2 39) (shapeCast S16 (pair0_lt.sl.v1941_5 d L tab k r g1 g2 hR hin h4) hc16) = AccMath.accVec (rowF fl tab (wL L).val (2 * t1.val) (2 * k.val + 1)) (offF fl (wL L).val (2 * t1.val) (2 * k.val + 1)) 2 40 :=
      acc_step d L fl tab (wL L).val (2 * t1.val) (2 * k.val + 1) 1 _ (hRB _) ⟨39, by decide⟩ ⟨2, by decide⟩ _ rfl _ hwB_39 _ (k1_off43_form ⟨2, by decide⟩ _ _) _ hc16
    have sB2_40 : addf (AccMath.accVec (rowF fl tab (wL L).val (2 * t1.val) (2 * k.val + 1)) (offF fl (wL L).val (2 * t1.val) (2 * k.val + 1)) 2 40) (shapeCast S16 (pair0_lt.sl.v1977_5 d L tab k r g1 g2 hR hin h4) hc16) = AccMath.accVec (rowF fl tab (wL L).val (2 * t1.val) (2 * k.val + 1)) (offF fl (wL L).val (2 * t1.val) (2 * k.val + 1)) 2 41 :=
      acc_step d L fl tab (wL L).val (2 * t1.val) (2 * k.val + 1) 1 _ (hRB _) ⟨40, by decide⟩ ⟨2, by decide⟩ _ rfl _ hwB_40 _ (k1_off44_form ⟨2, by decide⟩ _ _) _ hc16
    have sB2_41 : addf (AccMath.accVec (rowF fl tab (wL L).val (2 * t1.val) (2 * k.val + 1)) (offF fl (wL L).val (2 * t1.val) (2 * k.val + 1)) 2 41) (shapeCast S16 (pair0_lt.sl.v2013_5 d L tab k r g1 g2 hR hin h4) hc16) = AccMath.accVec (rowF fl tab (wL L).val (2 * t1.val) (2 * k.val + 1)) (offF fl (wL L).val (2 * t1.val) (2 * k.val + 1)) 2 42 :=
      acc_step d L fl tab (wL L).val (2 * t1.val) (2 * k.val + 1) 1 _ (hRB _) ⟨41, by decide⟩ ⟨2, by decide⟩ _ rfl _ hwB_41 _ (k1_off45_form ⟨2, by decide⟩ _ _) _ hc16
    have sB2_42 : addf (AccMath.accVec (rowF fl tab (wL L).val (2 * t1.val) (2 * k.val + 1)) (offF fl (wL L).val (2 * t1.val) (2 * k.val + 1)) 2 42) (shapeCast S16 (pair0_lt.sl.v2049_5 d L tab k r g1 g2 hR hin h4) hc16) = AccMath.accVec (rowF fl tab (wL L).val (2 * t1.val) (2 * k.val + 1)) (offF fl (wL L).val (2 * t1.val) (2 * k.val + 1)) 2 43 :=
      acc_step d L fl tab (wL L).val (2 * t1.val) (2 * k.val + 1) 1 _ (hRB _) ⟨42, by decide⟩ ⟨2, by decide⟩ _ rfl _ hwB_42 _ (k1_off46_form ⟨2, by decide⟩ _ _) _ hc16
    have sB2_43 : addf (AccMath.accVec (rowF fl tab (wL L).val (2 * t1.val) (2 * k.val + 1)) (offF fl (wL L).val (2 * t1.val) (2 * k.val + 1)) 2 43) (shapeCast S16 (pair0_lt.sl.v2085_5 d L tab k r g1 g2 hR hin h4) hc16) = AccMath.accVec (rowF fl tab (wL L).val (2 * t1.val) (2 * k.val + 1)) (offF fl (wL L).val (2 * t1.val) (2 * k.val + 1)) 2 44 :=
      acc_step d L fl tab (wL L).val (2 * t1.val) (2 * k.val + 1) 1 _ (hRB _) ⟨43, by decide⟩ ⟨2, by decide⟩ _ rfl _ hwB_43 _ (k1_off47_form ⟨2, by decide⟩ _ _) _ hc16
    have sB2_44 : addf (AccMath.accVec (rowF fl tab (wL L).val (2 * t1.val) (2 * k.val + 1)) (offF fl (wL L).val (2 * t1.val) (2 * k.val + 1)) 2 44) (shapeCast S16 (pair0_lt.sl.v2121_5 d L tab k r g1 g2 hR hin h4) hc16) = AccMath.accVec (rowF fl tab (wL L).val (2 * t1.val) (2 * k.val + 1)) (offF fl (wL L).val (2 * t1.val) (2 * k.val + 1)) 2 45 :=
      acc_step d L fl tab (wL L).val (2 * t1.val) (2 * k.val + 1) 1 _ (hRB _) ⟨44, by decide⟩ ⟨2, by decide⟩ _ rfl _ hwB_44 _ (k1_off48_form ⟨2, by decide⟩ _ _) _ hc16
    have sB2_45 : addf (AccMath.accVec (rowF fl tab (wL L).val (2 * t1.val) (2 * k.val + 1)) (offF fl (wL L).val (2 * t1.val) (2 * k.val + 1)) 2 45) (shapeCast S16 (pair0_lt.sl.v2157_5 d L tab k r g1 g2 hR hin h4) hc16) = AccMath.accVec (rowF fl tab (wL L).val (2 * t1.val) (2 * k.val + 1)) (offF fl (wL L).val (2 * t1.val) (2 * k.val + 1)) 2 46 :=
      acc_step d L fl tab (wL L).val (2 * t1.val) (2 * k.val + 1) 1 _ (hRB _) ⟨45, by decide⟩ ⟨2, by decide⟩ _ rfl _ hwB_45 _ (k1_off49_form ⟨2, by decide⟩ _ _) _ hc16
    have sB2_46 : addf (AccMath.accVec (rowF fl tab (wL L).val (2 * t1.val) (2 * k.val + 1)) (offF fl (wL L).val (2 * t1.val) (2 * k.val + 1)) 2 46) (shapeCast S16 (pair0_lt.sl.v2193_5 d L tab k r g1 g2 hR hin h4) hc16) = AccMath.accVec (rowF fl tab (wL L).val (2 * t1.val) (2 * k.val + 1)) (offF fl (wL L).val (2 * t1.val) (2 * k.val + 1)) 2 47 :=
      acc_step d L fl tab (wL L).val (2 * t1.val) (2 * k.val + 1) 1 _ (hRB _) ⟨46, by decide⟩ ⟨2, by decide⟩ _ rfl _ hwB_46 _ (k1_off50_form ⟨2, by decide⟩ _ _) _ hc16
    have sB2_47 : addf (AccMath.accVec (rowF fl tab (wL L).val (2 * t1.val) (2 * k.val + 1)) (offF fl (wL L).val (2 * t1.val) (2 * k.val + 1)) 2 47) (shapeCast S16 (pair0_lt.sl.v2229_5 d L tab k r g1 g2 hR hin h4) hc16) = AccMath.accVec (rowF fl tab (wL L).val (2 * t1.val) (2 * k.val + 1)) (offF fl (wL L).val (2 * t1.val) (2 * k.val + 1)) 2 48 :=
      acc_step d L fl tab (wL L).val (2 * t1.val) (2 * k.val + 1) 1 _ (hRB _) ⟨47, by decide⟩ ⟨2, by decide⟩ _ rfl _ hwB_47 _ (k1_off51_form ⟨2, by decide⟩ _ _) _ hc16
    have sB2_48 : addf (AccMath.accVec (rowF fl tab (wL L).val (2 * t1.val) (2 * k.val + 1)) (offF fl (wL L).val (2 * t1.val) (2 * k.val + 1)) 2 48) (shapeCast S16 (pair0_lt.sl.v1594 d L tab k r g1 g2 hR hin h4) hc16) = AccMath.accVec (rowF fl tab (wL L).val (2 * t1.val) (2 * k.val + 1)) (offF fl (wL L).val (2 * t1.val) (2 * k.val + 1)) 2 49 :=
      acc_step d L fl tab (wL L).val (2 * t1.val) (2 * k.val + 1) 1 _ (hRB _) ⟨48, by decide⟩ ⟨2, by decide⟩ _ rfl _ hwB_48 _ (k1_off53_form _ _) _ hc16
    have sB2_49 : addf (AccMath.accVec (rowF fl tab (wL L).val (2 * t1.val) (2 * k.val + 1)) (offF fl (wL L).val (2 * t1.val) (2 * k.val + 1)) 2 49) (shapeCast S16 (pair0_lt.sl.v1628 d L tab k r g1 g2 hR hin h4) hc16) = AccMath.accVec (rowF fl tab (wL L).val (2 * t1.val) (2 * k.val + 1)) (offF fl (wL L).val (2 * t1.val) (2 * k.val + 1)) 2 50 :=
      acc_step d L fl tab (wL L).val (2 * t1.val) (2 * k.val + 1) 1 _ (hRB _) ⟨49, by decide⟩ ⟨2, by decide⟩ _ rfl _ hwB_49 _ (k1_off54_form _ _) _ hc16
    have hPB2 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val + 1)) (offF fl (wL L).val (2 * t1.val) (2 * k.val + 1)) 2 0) (shapeCast S16 (pair0_lt.sl.v1689_3 d L tab k r g1 g2 hR hin h4) hc16)) (shapeCast S16 (pair0_lt.sl.v1725_3 d L tab k r g1 g2 hR hin h4) hc16)) (shapeCast S16 (pair0_lt.sl.v1761_3 d L tab k r g1 g2 hR hin h4) hc16)) (shapeCast S16 (pair0_lt.sl.v1797_3 d L tab k r g1 g2 hR hin h4) hc16)) (shapeCast S16 (pair0_lt.sl.v1833_3 d L tab k r g1 g2 hR hin h4) hc16)) (shapeCast S16 (pair0_lt.sl.v1869_3 d L tab k r g1 g2 hR hin h4) hc16)) (shapeCast S16 (pair0_lt.sl.v1905_3 d L tab k r g1 g2 hR hin h4) hc16)) (shapeCast S16 (pair0_lt.sl.v1941_3 d L tab k r g1 g2 hR hin h4) hc16)) (shapeCast S16 (pair0_lt.sl.v1977_3 d L tab k r g1 g2 hR hin h4) hc16)) (shapeCast S16 (pair0_lt.sl.v2013_3 d L tab k r g1 g2 hR hin h4) hc16)) (shapeCast S16 (pair0_lt.sl.v2049_3 d L tab k r g1 g2 hR hin h4) hc16)) (shapeCast S16 (pair0_lt.sl.v2085_3 d L tab k r g1 g2 hR hin h4) hc16)) (shapeCast S16 (pair0_lt.sl.v2121_3 d L tab k r g1 g2 hR hin h4) hc16)) (shapeCast S16 (pair0_lt.sl.v2157_3 d L tab k r g1 g2 hR hin h4) hc16)) (shapeCast S16 (pair0_lt.sl.v2193_3 d L tab k r g1 g2 hR hin h4) hc16)) (shapeCast S16 (pair0_lt.sl.v2229_3 d L tab k r g1 g2 hR hin h4) hc16)) (shapeCast S16 (pair0_lt.sl.v1689_4 d L tab k r g1 g2 hR hin h4) hc16)) (shapeCast S16 (pair0_lt.sl.v1725_4 d L tab k r g1 g2 hR hin h4) hc16)) (shapeCast S16 (pair0_lt.sl.v1761_4 d L tab k r g1 g2 hR hin h4) hc16)) (shapeCast S16 (pair0_lt.sl.v1797_4 d L tab k r g1 g2 hR hin h4) hc16)) (shapeCast S16 (pair0_lt.sl.v1833_4 d L tab k r g1 g2 hR hin h4) hc16)) (shapeCast S16 (pair0_lt.sl.v1869_4 d L tab k r g1 g2 hR hin h4) hc16)) (shapeCast S16 (pair0_lt.sl.v1905_4 d L tab k r g1 g2 hR hin h4) hc16)) (shapeCast S16 (pair0_lt.sl.v1941_4 d L tab k r g1 g2 hR hin h4) hc16)) (shapeCast S16 (pair0_lt.sl.v1977_4 d L tab k r g1 g2 hR hin h4) hc16)) (shapeCast S16 (pair0_lt.sl.v2013_4 d L tab k r g1 g2 hR hin h4) hc16)) (shapeCast S16 (pair0_lt.sl.v2049_4 d L tab k r g1 g2 hR hin h4) hc16)) (shapeCast S16 (pair0_lt.sl.v2085_4 d L tab k r g1 g2 hR hin h4) hc16)) (shapeCast S16 (pair0_lt.sl.v2121_4 d L tab k r g1 g2 hR hin h4) hc16)) (shapeCast S16 (pair0_lt.sl.v2157_4 d L tab k r g1 g2 hR hin h4) hc16)) (shapeCast S16 (pair0_lt.sl.v2193_4 d L tab k r g1 g2 hR hin h4) hc16)) (shapeCast S16 (pair0_lt.sl.v2229_4 d L tab k r g1 g2 hR hin h4) hc16)) (shapeCast S16 (pair0_lt.sl.v1689_5 d L tab k r g1 g2 hR hin h4) hc16)) (shapeCast S16 (pair0_lt.sl.v1725_5 d L tab k r g1 g2 hR hin h4) hc16)) (shapeCast S16 (pair0_lt.sl.v1761_5 d L tab k r g1 g2 hR hin h4) hc16)) (shapeCast S16 (pair0_lt.sl.v1797_5 d L tab k r g1 g2 hR hin h4) hc16)) (shapeCast S16 (pair0_lt.sl.v1833_5 d L tab k r g1 g2 hR hin h4) hc16)) (shapeCast S16 (pair0_lt.sl.v1869_5 d L tab k r g1 g2 hR hin h4) hc16)) (shapeCast S16 (pair0_lt.sl.v1905_5 d L tab k r g1 g2 hR hin h4) hc16)) (shapeCast S16 (pair0_lt.sl.v1941_5 d L tab k r g1 g2 hR hin h4) hc16)) (shapeCast S16 (pair0_lt.sl.v1977_5 d L tab k r g1 g2 hR hin h4) hc16)) (shapeCast S16 (pair0_lt.sl.v2013_5 d L tab k r g1 g2 hR hin h4) hc16)) (shapeCast S16 (pair0_lt.sl.v2049_5 d L tab k r g1 g2 hR hin h4) hc16)) (shapeCast S16 (pair0_lt.sl.v2085_5 d L tab k r g1 g2 hR hin h4) hc16)) (shapeCast S16 (pair0_lt.sl.v2121_5 d L tab k r g1 g2 hR hin h4) hc16)) (shapeCast S16 (pair0_lt.sl.v2157_5 d L tab k r g1 g2 hR hin h4) hc16)) (shapeCast S16 (pair0_lt.sl.v2193_5 d L tab k r g1 g2 hR hin h4) hc16)) (shapeCast S16 (pair0_lt.sl.v2229_5 d L tab k r g1 g2 hR hin h4) hc16)) (shapeCast S16 (pair0_lt.sl.v1594 d L tab k r g1 g2 hR hin h4) hc16)) (shapeCast S16 (pair0_lt.sl.v1628 d L tab k r g1 g2 hR hin h4) hc16)) hc1 x = Spec.bagPartial fl tab (128 * (wL L).val + 16 * (2 * t1.val) + (2 * k.val + 1)) (16 * 2 + (x 2).val) 50 := fun x => by
      rw [sB2_0, sB2_1, sB2_2, sB2_3, sB2_4, sB2_5, sB2_6, sB2_7, sB2_8, sB2_9, sB2_10, sB2_11, sB2_12, sB2_13, sB2_14, sB2_15, sB2_16, sB2_17, sB2_18, sB2_19, sB2_20, sB2_21, sB2_22, sB2_23, sB2_24, sB2_25, sB2_26, sB2_27, sB2_28, sB2_29, sB2_30, sB2_31, sB2_32, sB2_33, sB2_34, sB2_35, sB2_36, sB2_37, sB2_38, sB2_39, sB2_40, sB2_41, sB2_42, sB2_43, sB2_44, sB2_45, sB2_46, sB2_47, sB2_48, sB2_49]; exact payload_ok fl tab (wL L).val (2 * t1.val) (2 * k.val + 1) ⟨2, by decide⟩ hc1 x
    have sB3_0 : addf (AccMath.accVec (rowF fl tab (wL L).val (2 * t1.val) (2 * k.val + 1)) (offF fl (wL L).val (2 * t1.val) (2 * k.val + 1)) 3 0) (shapeCast S16 (pair0_lt.sl.v1697_3 d L tab k r g1 g2 hR hin h4) hc16) = AccMath.accVec (rowF fl tab (wL L).val (2 * t1.val) (2 * k.val + 1)) (offF fl (wL L).val (2 * t1.val) (2 * k.val + 1)) 3 1 :=
      acc_step d L fl tab (wL L).val (2 * t1.val) (2 * k.val + 1) 1 _ (hRB _) ⟨0, by decide⟩ ⟨3, by decide⟩ _ rfl _ hwB_0 _ (k1_off36_form ⟨0, by decide⟩ _ _) _ hc16
    have sB3_1 : addf (AccMath.accVec (rowF fl tab (wL L).val (2 * t1.val) (2 * k.val + 1)) (offF fl (wL L).val (2 * t1.val) (2 * k.val + 1)) 3 1) (shapeCast S16 (pair0_lt.sl.v1733_3 d L tab k r g1 g2 hR hin h4) hc16) = AccMath.accVec (rowF fl tab (wL L).val (2 * t1.val) (2 * k.val + 1)) (offF fl (wL L).val (2 * t1.val) (2 * k.val + 1)) 3 2 :=
      acc_step d L fl tab (wL L).val (2 * t1.val) (2 * k.val + 1) 1 _ (hRB _) ⟨1, by decide⟩ ⟨3, by decide⟩ _ rfl _ hwB_1 _ (k1_off37_form ⟨0, by decide⟩ _ _) _ hc16
    have sB3_2 : addf (AccMath.accVec (rowF fl tab (wL L).val (2 * t1.val) (2 * k.val + 1)) (offF fl (wL L).val (2 * t1.val) (2 * k.val + 1)) 3 2) (shapeCast S16 (pair0_lt.sl.v1769_3 d L tab k r g1 g2 hR hin h4) hc16) = AccMath.accVec (rowF fl tab (wL L).val (2 * t1.val) (2 * k.val + 1)) (offF fl (wL L).val (2 * t1.val) (2 * k.val + 1)) 3 3 :=
      acc_step d L fl tab (wL L).val (2 * t1.val) (2 * k.val + 1) 1 _ (hRB _) ⟨2, by decide⟩ ⟨3, by decide⟩ _ rfl _ hwB_2 _ (k1_off38_form ⟨0, by decide⟩ _ _) _ hc16
    have sB3_3 : addf (AccMath.accVec (rowF fl tab (wL L).val (2 * t1.val) (2 * k.val + 1)) (offF fl (wL L).val (2 * t1.val) (2 * k.val + 1)) 3 3) (shapeCast S16 (pair0_lt.sl.v1805_3 d L tab k r g1 g2 hR hin h4) hc16) = AccMath.accVec (rowF fl tab (wL L).val (2 * t1.val) (2 * k.val + 1)) (offF fl (wL L).val (2 * t1.val) (2 * k.val + 1)) 3 4 :=
      acc_step d L fl tab (wL L).val (2 * t1.val) (2 * k.val + 1) 1 _ (hRB _) ⟨3, by decide⟩ ⟨3, by decide⟩ _ rfl _ hwB_3 _ (k1_off39_form ⟨0, by decide⟩ _ _) _ hc16
    have sB3_4 : addf (AccMath.accVec (rowF fl tab (wL L).val (2 * t1.val) (2 * k.val + 1)) (offF fl (wL L).val (2 * t1.val) (2 * k.val + 1)) 3 4) (shapeCast S16 (pair0_lt.sl.v1841_3 d L tab k r g1 g2 hR hin h4) hc16) = AccMath.accVec (rowF fl tab (wL L).val (2 * t1.val) (2 * k.val + 1)) (offF fl (wL L).val (2 * t1.val) (2 * k.val + 1)) 3 5 :=
      acc_step d L fl tab (wL L).val (2 * t1.val) (2 * k.val + 1) 1 _ (hRB _) ⟨4, by decide⟩ ⟨3, by decide⟩ _ rfl _ hwB_4 _ (k1_off40_form ⟨0, by decide⟩ _ _) _ hc16
    have sB3_5 : addf (AccMath.accVec (rowF fl tab (wL L).val (2 * t1.val) (2 * k.val + 1)) (offF fl (wL L).val (2 * t1.val) (2 * k.val + 1)) 3 5) (shapeCast S16 (pair0_lt.sl.v1877_3 d L tab k r g1 g2 hR hin h4) hc16) = AccMath.accVec (rowF fl tab (wL L).val (2 * t1.val) (2 * k.val + 1)) (offF fl (wL L).val (2 * t1.val) (2 * k.val + 1)) 3 6 :=
      acc_step d L fl tab (wL L).val (2 * t1.val) (2 * k.val + 1) 1 _ (hRB _) ⟨5, by decide⟩ ⟨3, by decide⟩ _ rfl _ hwB_5 _ (k1_off41_form ⟨0, by decide⟩ _ _) _ hc16
    have sB3_6 : addf (AccMath.accVec (rowF fl tab (wL L).val (2 * t1.val) (2 * k.val + 1)) (offF fl (wL L).val (2 * t1.val) (2 * k.val + 1)) 3 6) (shapeCast S16 (pair0_lt.sl.v1913_3 d L tab k r g1 g2 hR hin h4) hc16) = AccMath.accVec (rowF fl tab (wL L).val (2 * t1.val) (2 * k.val + 1)) (offF fl (wL L).val (2 * t1.val) (2 * k.val + 1)) 3 7 :=
      acc_step d L fl tab (wL L).val (2 * t1.val) (2 * k.val + 1) 1 _ (hRB _) ⟨6, by decide⟩ ⟨3, by decide⟩ _ rfl _ hwB_6 _ (k1_off42_form ⟨0, by decide⟩ _ _) _ hc16
    have sB3_7 : addf (AccMath.accVec (rowF fl tab (wL L).val (2 * t1.val) (2 * k.val + 1)) (offF fl (wL L).val (2 * t1.val) (2 * k.val + 1)) 3 7) (shapeCast S16 (pair0_lt.sl.v1949_3 d L tab k r g1 g2 hR hin h4) hc16) = AccMath.accVec (rowF fl tab (wL L).val (2 * t1.val) (2 * k.val + 1)) (offF fl (wL L).val (2 * t1.val) (2 * k.val + 1)) 3 8 :=
      acc_step d L fl tab (wL L).val (2 * t1.val) (2 * k.val + 1) 1 _ (hRB _) ⟨7, by decide⟩ ⟨3, by decide⟩ _ rfl _ hwB_7 _ (k1_off43_form ⟨0, by decide⟩ _ _) _ hc16
    have sB3_8 : addf (AccMath.accVec (rowF fl tab (wL L).val (2 * t1.val) (2 * k.val + 1)) (offF fl (wL L).val (2 * t1.val) (2 * k.val + 1)) 3 8) (shapeCast S16 (pair0_lt.sl.v1985_3 d L tab k r g1 g2 hR hin h4) hc16) = AccMath.accVec (rowF fl tab (wL L).val (2 * t1.val) (2 * k.val + 1)) (offF fl (wL L).val (2 * t1.val) (2 * k.val + 1)) 3 9 :=
      acc_step d L fl tab (wL L).val (2 * t1.val) (2 * k.val + 1) 1 _ (hRB _) ⟨8, by decide⟩ ⟨3, by decide⟩ _ rfl _ hwB_8 _ (k1_off44_form ⟨0, by decide⟩ _ _) _ hc16
    have sB3_9 : addf (AccMath.accVec (rowF fl tab (wL L).val (2 * t1.val) (2 * k.val + 1)) (offF fl (wL L).val (2 * t1.val) (2 * k.val + 1)) 3 9) (shapeCast S16 (pair0_lt.sl.v2021_3 d L tab k r g1 g2 hR hin h4) hc16) = AccMath.accVec (rowF fl tab (wL L).val (2 * t1.val) (2 * k.val + 1)) (offF fl (wL L).val (2 * t1.val) (2 * k.val + 1)) 3 10 :=
      acc_step d L fl tab (wL L).val (2 * t1.val) (2 * k.val + 1) 1 _ (hRB _) ⟨9, by decide⟩ ⟨3, by decide⟩ _ rfl _ hwB_9 _ (k1_off45_form ⟨0, by decide⟩ _ _) _ hc16
    have sB3_10 : addf (AccMath.accVec (rowF fl tab (wL L).val (2 * t1.val) (2 * k.val + 1)) (offF fl (wL L).val (2 * t1.val) (2 * k.val + 1)) 3 10) (shapeCast S16 (pair0_lt.sl.v2057_3 d L tab k r g1 g2 hR hin h4) hc16) = AccMath.accVec (rowF fl tab (wL L).val (2 * t1.val) (2 * k.val + 1)) (offF fl (wL L).val (2 * t1.val) (2 * k.val + 1)) 3 11 :=
      acc_step d L fl tab (wL L).val (2 * t1.val) (2 * k.val + 1) 1 _ (hRB _) ⟨10, by decide⟩ ⟨3, by decide⟩ _ rfl _ hwB_10 _ (k1_off46_form ⟨0, by decide⟩ _ _) _ hc16
    have sB3_11 : addf (AccMath.accVec (rowF fl tab (wL L).val (2 * t1.val) (2 * k.val + 1)) (offF fl (wL L).val (2 * t1.val) (2 * k.val + 1)) 3 11) (shapeCast S16 (pair0_lt.sl.v2093_3 d L tab k r g1 g2 hR hin h4) hc16) = AccMath.accVec (rowF fl tab (wL L).val (2 * t1.val) (2 * k.val + 1)) (offF fl (wL L).val (2 * t1.val) (2 * k.val + 1)) 3 12 :=
      acc_step d L fl tab (wL L).val (2 * t1.val) (2 * k.val + 1) 1 _ (hRB _) ⟨11, by decide⟩ ⟨3, by decide⟩ _ rfl _ hwB_11 _ (k1_off47_form ⟨0, by decide⟩ _ _) _ hc16
    have sB3_12 : addf (AccMath.accVec (rowF fl tab (wL L).val (2 * t1.val) (2 * k.val + 1)) (offF fl (wL L).val (2 * t1.val) (2 * k.val + 1)) 3 12) (shapeCast S16 (pair0_lt.sl.v2129_3 d L tab k r g1 g2 hR hin h4) hc16) = AccMath.accVec (rowF fl tab (wL L).val (2 * t1.val) (2 * k.val + 1)) (offF fl (wL L).val (2 * t1.val) (2 * k.val + 1)) 3 13 :=
      acc_step d L fl tab (wL L).val (2 * t1.val) (2 * k.val + 1) 1 _ (hRB _) ⟨12, by decide⟩ ⟨3, by decide⟩ _ rfl _ hwB_12 _ (k1_off48_form ⟨0, by decide⟩ _ _) _ hc16
    have sB3_13 : addf (AccMath.accVec (rowF fl tab (wL L).val (2 * t1.val) (2 * k.val + 1)) (offF fl (wL L).val (2 * t1.val) (2 * k.val + 1)) 3 13) (shapeCast S16 (pair0_lt.sl.v2165_3 d L tab k r g1 g2 hR hin h4) hc16) = AccMath.accVec (rowF fl tab (wL L).val (2 * t1.val) (2 * k.val + 1)) (offF fl (wL L).val (2 * t1.val) (2 * k.val + 1)) 3 14 :=
      acc_step d L fl tab (wL L).val (2 * t1.val) (2 * k.val + 1) 1 _ (hRB _) ⟨13, by decide⟩ ⟨3, by decide⟩ _ rfl _ hwB_13 _ (k1_off49_form ⟨0, by decide⟩ _ _) _ hc16
    have sB3_14 : addf (AccMath.accVec (rowF fl tab (wL L).val (2 * t1.val) (2 * k.val + 1)) (offF fl (wL L).val (2 * t1.val) (2 * k.val + 1)) 3 14) (shapeCast S16 (pair0_lt.sl.v2201_3 d L tab k r g1 g2 hR hin h4) hc16) = AccMath.accVec (rowF fl tab (wL L).val (2 * t1.val) (2 * k.val + 1)) (offF fl (wL L).val (2 * t1.val) (2 * k.val + 1)) 3 15 :=
      acc_step d L fl tab (wL L).val (2 * t1.val) (2 * k.val + 1) 1 _ (hRB _) ⟨14, by decide⟩ ⟨3, by decide⟩ _ rfl _ hwB_14 _ (k1_off50_form ⟨0, by decide⟩ _ _) _ hc16
    have sB3_15 : addf (AccMath.accVec (rowF fl tab (wL L).val (2 * t1.val) (2 * k.val + 1)) (offF fl (wL L).val (2 * t1.val) (2 * k.val + 1)) 3 15) (shapeCast S16 (pair0_lt.sl.v2237_3 d L tab k r g1 g2 hR hin h4) hc16) = AccMath.accVec (rowF fl tab (wL L).val (2 * t1.val) (2 * k.val + 1)) (offF fl (wL L).val (2 * t1.val) (2 * k.val + 1)) 3 16 :=
      acc_step d L fl tab (wL L).val (2 * t1.val) (2 * k.val + 1) 1 _ (hRB _) ⟨15, by decide⟩ ⟨3, by decide⟩ _ rfl _ hwB_15 _ (k1_off51_form ⟨0, by decide⟩ _ _) _ hc16
    have sB3_16 : addf (AccMath.accVec (rowF fl tab (wL L).val (2 * t1.val) (2 * k.val + 1)) (offF fl (wL L).val (2 * t1.val) (2 * k.val + 1)) 3 16) (shapeCast S16 (pair0_lt.sl.v1697_4 d L tab k r g1 g2 hR hin h4) hc16) = AccMath.accVec (rowF fl tab (wL L).val (2 * t1.val) (2 * k.val + 1)) (offF fl (wL L).val (2 * t1.val) (2 * k.val + 1)) 3 17 :=
      acc_step d L fl tab (wL L).val (2 * t1.val) (2 * k.val + 1) 1 _ (hRB _) ⟨16, by decide⟩ ⟨3, by decide⟩ _ rfl _ hwB_16 _ (k1_off36_form ⟨1, by decide⟩ _ _) _ hc16
    have sB3_17 : addf (AccMath.accVec (rowF fl tab (wL L).val (2 * t1.val) (2 * k.val + 1)) (offF fl (wL L).val (2 * t1.val) (2 * k.val + 1)) 3 17) (shapeCast S16 (pair0_lt.sl.v1733_4 d L tab k r g1 g2 hR hin h4) hc16) = AccMath.accVec (rowF fl tab (wL L).val (2 * t1.val) (2 * k.val + 1)) (offF fl (wL L).val (2 * t1.val) (2 * k.val + 1)) 3 18 :=
      acc_step d L fl tab (wL L).val (2 * t1.val) (2 * k.val + 1) 1 _ (hRB _) ⟨17, by decide⟩ ⟨3, by decide⟩ _ rfl _ hwB_17 _ (k1_off37_form ⟨1, by decide⟩ _ _) _ hc16
    have sB3_18 : addf (AccMath.accVec (rowF fl tab (wL L).val (2 * t1.val) (2 * k.val + 1)) (offF fl (wL L).val (2 * t1.val) (2 * k.val + 1)) 3 18) (shapeCast S16 (pair0_lt.sl.v1769_4 d L tab k r g1 g2 hR hin h4) hc16) = AccMath.accVec (rowF fl tab (wL L).val (2 * t1.val) (2 * k.val + 1)) (offF fl (wL L).val (2 * t1.val) (2 * k.val + 1)) 3 19 :=
      acc_step d L fl tab (wL L).val (2 * t1.val) (2 * k.val + 1) 1 _ (hRB _) ⟨18, by decide⟩ ⟨3, by decide⟩ _ rfl _ hwB_18 _ (k1_off38_form ⟨1, by decide⟩ _ _) _ hc16
    have sB3_19 : addf (AccMath.accVec (rowF fl tab (wL L).val (2 * t1.val) (2 * k.val + 1)) (offF fl (wL L).val (2 * t1.val) (2 * k.val + 1)) 3 19) (shapeCast S16 (pair0_lt.sl.v1805_4 d L tab k r g1 g2 hR hin h4) hc16) = AccMath.accVec (rowF fl tab (wL L).val (2 * t1.val) (2 * k.val + 1)) (offF fl (wL L).val (2 * t1.val) (2 * k.val + 1)) 3 20 :=
      acc_step d L fl tab (wL L).val (2 * t1.val) (2 * k.val + 1) 1 _ (hRB _) ⟨19, by decide⟩ ⟨3, by decide⟩ _ rfl _ hwB_19 _ (k1_off39_form ⟨1, by decide⟩ _ _) _ hc16
    have sB3_20 : addf (AccMath.accVec (rowF fl tab (wL L).val (2 * t1.val) (2 * k.val + 1)) (offF fl (wL L).val (2 * t1.val) (2 * k.val + 1)) 3 20) (shapeCast S16 (pair0_lt.sl.v1841_4 d L tab k r g1 g2 hR hin h4) hc16) = AccMath.accVec (rowF fl tab (wL L).val (2 * t1.val) (2 * k.val + 1)) (offF fl (wL L).val (2 * t1.val) (2 * k.val + 1)) 3 21 :=
      acc_step d L fl tab (wL L).val (2 * t1.val) (2 * k.val + 1) 1 _ (hRB _) ⟨20, by decide⟩ ⟨3, by decide⟩ _ rfl _ hwB_20 _ (k1_off40_form ⟨1, by decide⟩ _ _) _ hc16
    have sB3_21 : addf (AccMath.accVec (rowF fl tab (wL L).val (2 * t1.val) (2 * k.val + 1)) (offF fl (wL L).val (2 * t1.val) (2 * k.val + 1)) 3 21) (shapeCast S16 (pair0_lt.sl.v1877_4 d L tab k r g1 g2 hR hin h4) hc16) = AccMath.accVec (rowF fl tab (wL L).val (2 * t1.val) (2 * k.val + 1)) (offF fl (wL L).val (2 * t1.val) (2 * k.val + 1)) 3 22 :=
      acc_step d L fl tab (wL L).val (2 * t1.val) (2 * k.val + 1) 1 _ (hRB _) ⟨21, by decide⟩ ⟨3, by decide⟩ _ rfl _ hwB_21 _ (k1_off41_form ⟨1, by decide⟩ _ _) _ hc16
    have sB3_22 : addf (AccMath.accVec (rowF fl tab (wL L).val (2 * t1.val) (2 * k.val + 1)) (offF fl (wL L).val (2 * t1.val) (2 * k.val + 1)) 3 22) (shapeCast S16 (pair0_lt.sl.v1913_4 d L tab k r g1 g2 hR hin h4) hc16) = AccMath.accVec (rowF fl tab (wL L).val (2 * t1.val) (2 * k.val + 1)) (offF fl (wL L).val (2 * t1.val) (2 * k.val + 1)) 3 23 :=
      acc_step d L fl tab (wL L).val (2 * t1.val) (2 * k.val + 1) 1 _ (hRB _) ⟨22, by decide⟩ ⟨3, by decide⟩ _ rfl _ hwB_22 _ (k1_off42_form ⟨1, by decide⟩ _ _) _ hc16
    have sB3_23 : addf (AccMath.accVec (rowF fl tab (wL L).val (2 * t1.val) (2 * k.val + 1)) (offF fl (wL L).val (2 * t1.val) (2 * k.val + 1)) 3 23) (shapeCast S16 (pair0_lt.sl.v1949_4 d L tab k r g1 g2 hR hin h4) hc16) = AccMath.accVec (rowF fl tab (wL L).val (2 * t1.val) (2 * k.val + 1)) (offF fl (wL L).val (2 * t1.val) (2 * k.val + 1)) 3 24 :=
      acc_step d L fl tab (wL L).val (2 * t1.val) (2 * k.val + 1) 1 _ (hRB _) ⟨23, by decide⟩ ⟨3, by decide⟩ _ rfl _ hwB_23 _ (k1_off43_form ⟨1, by decide⟩ _ _) _ hc16
    have sB3_24 : addf (AccMath.accVec (rowF fl tab (wL L).val (2 * t1.val) (2 * k.val + 1)) (offF fl (wL L).val (2 * t1.val) (2 * k.val + 1)) 3 24) (shapeCast S16 (pair0_lt.sl.v1985_4 d L tab k r g1 g2 hR hin h4) hc16) = AccMath.accVec (rowF fl tab (wL L).val (2 * t1.val) (2 * k.val + 1)) (offF fl (wL L).val (2 * t1.val) (2 * k.val + 1)) 3 25 :=
      acc_step d L fl tab (wL L).val (2 * t1.val) (2 * k.val + 1) 1 _ (hRB _) ⟨24, by decide⟩ ⟨3, by decide⟩ _ rfl _ hwB_24 _ (k1_off44_form ⟨1, by decide⟩ _ _) _ hc16
    have sB3_25 : addf (AccMath.accVec (rowF fl tab (wL L).val (2 * t1.val) (2 * k.val + 1)) (offF fl (wL L).val (2 * t1.val) (2 * k.val + 1)) 3 25) (shapeCast S16 (pair0_lt.sl.v2021_4 d L tab k r g1 g2 hR hin h4) hc16) = AccMath.accVec (rowF fl tab (wL L).val (2 * t1.val) (2 * k.val + 1)) (offF fl (wL L).val (2 * t1.val) (2 * k.val + 1)) 3 26 :=
      acc_step d L fl tab (wL L).val (2 * t1.val) (2 * k.val + 1) 1 _ (hRB _) ⟨25, by decide⟩ ⟨3, by decide⟩ _ rfl _ hwB_25 _ (k1_off45_form ⟨1, by decide⟩ _ _) _ hc16
    have sB3_26 : addf (AccMath.accVec (rowF fl tab (wL L).val (2 * t1.val) (2 * k.val + 1)) (offF fl (wL L).val (2 * t1.val) (2 * k.val + 1)) 3 26) (shapeCast S16 (pair0_lt.sl.v2057_4 d L tab k r g1 g2 hR hin h4) hc16) = AccMath.accVec (rowF fl tab (wL L).val (2 * t1.val) (2 * k.val + 1)) (offF fl (wL L).val (2 * t1.val) (2 * k.val + 1)) 3 27 :=
      acc_step d L fl tab (wL L).val (2 * t1.val) (2 * k.val + 1) 1 _ (hRB _) ⟨26, by decide⟩ ⟨3, by decide⟩ _ rfl _ hwB_26 _ (k1_off46_form ⟨1, by decide⟩ _ _) _ hc16
    have sB3_27 : addf (AccMath.accVec (rowF fl tab (wL L).val (2 * t1.val) (2 * k.val + 1)) (offF fl (wL L).val (2 * t1.val) (2 * k.val + 1)) 3 27) (shapeCast S16 (pair0_lt.sl.v2093_4 d L tab k r g1 g2 hR hin h4) hc16) = AccMath.accVec (rowF fl tab (wL L).val (2 * t1.val) (2 * k.val + 1)) (offF fl (wL L).val (2 * t1.val) (2 * k.val + 1)) 3 28 :=
      acc_step d L fl tab (wL L).val (2 * t1.val) (2 * k.val + 1) 1 _ (hRB _) ⟨27, by decide⟩ ⟨3, by decide⟩ _ rfl _ hwB_27 _ (k1_off47_form ⟨1, by decide⟩ _ _) _ hc16
    have sB3_28 : addf (AccMath.accVec (rowF fl tab (wL L).val (2 * t1.val) (2 * k.val + 1)) (offF fl (wL L).val (2 * t1.val) (2 * k.val + 1)) 3 28) (shapeCast S16 (pair0_lt.sl.v2129_4 d L tab k r g1 g2 hR hin h4) hc16) = AccMath.accVec (rowF fl tab (wL L).val (2 * t1.val) (2 * k.val + 1)) (offF fl (wL L).val (2 * t1.val) (2 * k.val + 1)) 3 29 :=
      acc_step d L fl tab (wL L).val (2 * t1.val) (2 * k.val + 1) 1 _ (hRB _) ⟨28, by decide⟩ ⟨3, by decide⟩ _ rfl _ hwB_28 _ (k1_off48_form ⟨1, by decide⟩ _ _) _ hc16
    have sB3_29 : addf (AccMath.accVec (rowF fl tab (wL L).val (2 * t1.val) (2 * k.val + 1)) (offF fl (wL L).val (2 * t1.val) (2 * k.val + 1)) 3 29) (shapeCast S16 (pair0_lt.sl.v2165_4 d L tab k r g1 g2 hR hin h4) hc16) = AccMath.accVec (rowF fl tab (wL L).val (2 * t1.val) (2 * k.val + 1)) (offF fl (wL L).val (2 * t1.val) (2 * k.val + 1)) 3 30 :=
      acc_step d L fl tab (wL L).val (2 * t1.val) (2 * k.val + 1) 1 _ (hRB _) ⟨29, by decide⟩ ⟨3, by decide⟩ _ rfl _ hwB_29 _ (k1_off49_form ⟨1, by decide⟩ _ _) _ hc16
    have sB3_30 : addf (AccMath.accVec (rowF fl tab (wL L).val (2 * t1.val) (2 * k.val + 1)) (offF fl (wL L).val (2 * t1.val) (2 * k.val + 1)) 3 30) (shapeCast S16 (pair0_lt.sl.v2201_4 d L tab k r g1 g2 hR hin h4) hc16) = AccMath.accVec (rowF fl tab (wL L).val (2 * t1.val) (2 * k.val + 1)) (offF fl (wL L).val (2 * t1.val) (2 * k.val + 1)) 3 31 :=
      acc_step d L fl tab (wL L).val (2 * t1.val) (2 * k.val + 1) 1 _ (hRB _) ⟨30, by decide⟩ ⟨3, by decide⟩ _ rfl _ hwB_30 _ (k1_off50_form ⟨1, by decide⟩ _ _) _ hc16
    have sB3_31 : addf (AccMath.accVec (rowF fl tab (wL L).val (2 * t1.val) (2 * k.val + 1)) (offF fl (wL L).val (2 * t1.val) (2 * k.val + 1)) 3 31) (shapeCast S16 (pair0_lt.sl.v2237_4 d L tab k r g1 g2 hR hin h4) hc16) = AccMath.accVec (rowF fl tab (wL L).val (2 * t1.val) (2 * k.val + 1)) (offF fl (wL L).val (2 * t1.val) (2 * k.val + 1)) 3 32 :=
      acc_step d L fl tab (wL L).val (2 * t1.val) (2 * k.val + 1) 1 _ (hRB _) ⟨31, by decide⟩ ⟨3, by decide⟩ _ rfl _ hwB_31 _ (k1_off51_form ⟨1, by decide⟩ _ _) _ hc16
    have sB3_32 : addf (AccMath.accVec (rowF fl tab (wL L).val (2 * t1.val) (2 * k.val + 1)) (offF fl (wL L).val (2 * t1.val) (2 * k.val + 1)) 3 32) (shapeCast S16 (pair0_lt.sl.v1697_5 d L tab k r g1 g2 hR hin h4) hc16) = AccMath.accVec (rowF fl tab (wL L).val (2 * t1.val) (2 * k.val + 1)) (offF fl (wL L).val (2 * t1.val) (2 * k.val + 1)) 3 33 :=
      acc_step d L fl tab (wL L).val (2 * t1.val) (2 * k.val + 1) 1 _ (hRB _) ⟨32, by decide⟩ ⟨3, by decide⟩ _ rfl _ hwB_32 _ (k1_off36_form ⟨2, by decide⟩ _ _) _ hc16
    have sB3_33 : addf (AccMath.accVec (rowF fl tab (wL L).val (2 * t1.val) (2 * k.val + 1)) (offF fl (wL L).val (2 * t1.val) (2 * k.val + 1)) 3 33) (shapeCast S16 (pair0_lt.sl.v1733_5 d L tab k r g1 g2 hR hin h4) hc16) = AccMath.accVec (rowF fl tab (wL L).val (2 * t1.val) (2 * k.val + 1)) (offF fl (wL L).val (2 * t1.val) (2 * k.val + 1)) 3 34 :=
      acc_step d L fl tab (wL L).val (2 * t1.val) (2 * k.val + 1) 1 _ (hRB _) ⟨33, by decide⟩ ⟨3, by decide⟩ _ rfl _ hwB_33 _ (k1_off37_form ⟨2, by decide⟩ _ _) _ hc16
    have sB3_34 : addf (AccMath.accVec (rowF fl tab (wL L).val (2 * t1.val) (2 * k.val + 1)) (offF fl (wL L).val (2 * t1.val) (2 * k.val + 1)) 3 34) (shapeCast S16 (pair0_lt.sl.v1769_5 d L tab k r g1 g2 hR hin h4) hc16) = AccMath.accVec (rowF fl tab (wL L).val (2 * t1.val) (2 * k.val + 1)) (offF fl (wL L).val (2 * t1.val) (2 * k.val + 1)) 3 35 :=
      acc_step d L fl tab (wL L).val (2 * t1.val) (2 * k.val + 1) 1 _ (hRB _) ⟨34, by decide⟩ ⟨3, by decide⟩ _ rfl _ hwB_34 _ (k1_off38_form ⟨2, by decide⟩ _ _) _ hc16
    have sB3_35 : addf (AccMath.accVec (rowF fl tab (wL L).val (2 * t1.val) (2 * k.val + 1)) (offF fl (wL L).val (2 * t1.val) (2 * k.val + 1)) 3 35) (shapeCast S16 (pair0_lt.sl.v1805_5 d L tab k r g1 g2 hR hin h4) hc16) = AccMath.accVec (rowF fl tab (wL L).val (2 * t1.val) (2 * k.val + 1)) (offF fl (wL L).val (2 * t1.val) (2 * k.val + 1)) 3 36 :=
      acc_step d L fl tab (wL L).val (2 * t1.val) (2 * k.val + 1) 1 _ (hRB _) ⟨35, by decide⟩ ⟨3, by decide⟩ _ rfl _ hwB_35 _ (k1_off39_form ⟨2, by decide⟩ _ _) _ hc16
    have sB3_36 : addf (AccMath.accVec (rowF fl tab (wL L).val (2 * t1.val) (2 * k.val + 1)) (offF fl (wL L).val (2 * t1.val) (2 * k.val + 1)) 3 36) (shapeCast S16 (pair0_lt.sl.v1841_5 d L tab k r g1 g2 hR hin h4) hc16) = AccMath.accVec (rowF fl tab (wL L).val (2 * t1.val) (2 * k.val + 1)) (offF fl (wL L).val (2 * t1.val) (2 * k.val + 1)) 3 37 :=
      acc_step d L fl tab (wL L).val (2 * t1.val) (2 * k.val + 1) 1 _ (hRB _) ⟨36, by decide⟩ ⟨3, by decide⟩ _ rfl _ hwB_36 _ (k1_off40_form ⟨2, by decide⟩ _ _) _ hc16
    have sB3_37 : addf (AccMath.accVec (rowF fl tab (wL L).val (2 * t1.val) (2 * k.val + 1)) (offF fl (wL L).val (2 * t1.val) (2 * k.val + 1)) 3 37) (shapeCast S16 (pair0_lt.sl.v1877_5 d L tab k r g1 g2 hR hin h4) hc16) = AccMath.accVec (rowF fl tab (wL L).val (2 * t1.val) (2 * k.val + 1)) (offF fl (wL L).val (2 * t1.val) (2 * k.val + 1)) 3 38 :=
      acc_step d L fl tab (wL L).val (2 * t1.val) (2 * k.val + 1) 1 _ (hRB _) ⟨37, by decide⟩ ⟨3, by decide⟩ _ rfl _ hwB_37 _ (k1_off41_form ⟨2, by decide⟩ _ _) _ hc16
    have sB3_38 : addf (AccMath.accVec (rowF fl tab (wL L).val (2 * t1.val) (2 * k.val + 1)) (offF fl (wL L).val (2 * t1.val) (2 * k.val + 1)) 3 38) (shapeCast S16 (pair0_lt.sl.v1913_5 d L tab k r g1 g2 hR hin h4) hc16) = AccMath.accVec (rowF fl tab (wL L).val (2 * t1.val) (2 * k.val + 1)) (offF fl (wL L).val (2 * t1.val) (2 * k.val + 1)) 3 39 :=
      acc_step d L fl tab (wL L).val (2 * t1.val) (2 * k.val + 1) 1 _ (hRB _) ⟨38, by decide⟩ ⟨3, by decide⟩ _ rfl _ hwB_38 _ (k1_off42_form ⟨2, by decide⟩ _ _) _ hc16
    have sB3_39 : addf (AccMath.accVec (rowF fl tab (wL L).val (2 * t1.val) (2 * k.val + 1)) (offF fl (wL L).val (2 * t1.val) (2 * k.val + 1)) 3 39) (shapeCast S16 (pair0_lt.sl.v1949_5 d L tab k r g1 g2 hR hin h4) hc16) = AccMath.accVec (rowF fl tab (wL L).val (2 * t1.val) (2 * k.val + 1)) (offF fl (wL L).val (2 * t1.val) (2 * k.val + 1)) 3 40 :=
      acc_step d L fl tab (wL L).val (2 * t1.val) (2 * k.val + 1) 1 _ (hRB _) ⟨39, by decide⟩ ⟨3, by decide⟩ _ rfl _ hwB_39 _ (k1_off43_form ⟨2, by decide⟩ _ _) _ hc16
    have sB3_40 : addf (AccMath.accVec (rowF fl tab (wL L).val (2 * t1.val) (2 * k.val + 1)) (offF fl (wL L).val (2 * t1.val) (2 * k.val + 1)) 3 40) (shapeCast S16 (pair0_lt.sl.v1985_5 d L tab k r g1 g2 hR hin h4) hc16) = AccMath.accVec (rowF fl tab (wL L).val (2 * t1.val) (2 * k.val + 1)) (offF fl (wL L).val (2 * t1.val) (2 * k.val + 1)) 3 41 :=
      acc_step d L fl tab (wL L).val (2 * t1.val) (2 * k.val + 1) 1 _ (hRB _) ⟨40, by decide⟩ ⟨3, by decide⟩ _ rfl _ hwB_40 _ (k1_off44_form ⟨2, by decide⟩ _ _) _ hc16
    have sB3_41 : addf (AccMath.accVec (rowF fl tab (wL L).val (2 * t1.val) (2 * k.val + 1)) (offF fl (wL L).val (2 * t1.val) (2 * k.val + 1)) 3 41) (shapeCast S16 (pair0_lt.sl.v2021_5 d L tab k r g1 g2 hR hin h4) hc16) = AccMath.accVec (rowF fl tab (wL L).val (2 * t1.val) (2 * k.val + 1)) (offF fl (wL L).val (2 * t1.val) (2 * k.val + 1)) 3 42 :=
      acc_step d L fl tab (wL L).val (2 * t1.val) (2 * k.val + 1) 1 _ (hRB _) ⟨41, by decide⟩ ⟨3, by decide⟩ _ rfl _ hwB_41 _ (k1_off45_form ⟨2, by decide⟩ _ _) _ hc16
    have sB3_42 : addf (AccMath.accVec (rowF fl tab (wL L).val (2 * t1.val) (2 * k.val + 1)) (offF fl (wL L).val (2 * t1.val) (2 * k.val + 1)) 3 42) (shapeCast S16 (pair0_lt.sl.v2057_5 d L tab k r g1 g2 hR hin h4) hc16) = AccMath.accVec (rowF fl tab (wL L).val (2 * t1.val) (2 * k.val + 1)) (offF fl (wL L).val (2 * t1.val) (2 * k.val + 1)) 3 43 :=
      acc_step d L fl tab (wL L).val (2 * t1.val) (2 * k.val + 1) 1 _ (hRB _) ⟨42, by decide⟩ ⟨3, by decide⟩ _ rfl _ hwB_42 _ (k1_off46_form ⟨2, by decide⟩ _ _) _ hc16
    have sB3_43 : addf (AccMath.accVec (rowF fl tab (wL L).val (2 * t1.val) (2 * k.val + 1)) (offF fl (wL L).val (2 * t1.val) (2 * k.val + 1)) 3 43) (shapeCast S16 (pair0_lt.sl.v2093_5 d L tab k r g1 g2 hR hin h4) hc16) = AccMath.accVec (rowF fl tab (wL L).val (2 * t1.val) (2 * k.val + 1)) (offF fl (wL L).val (2 * t1.val) (2 * k.val + 1)) 3 44 :=
      acc_step d L fl tab (wL L).val (2 * t1.val) (2 * k.val + 1) 1 _ (hRB _) ⟨43, by decide⟩ ⟨3, by decide⟩ _ rfl _ hwB_43 _ (k1_off47_form ⟨2, by decide⟩ _ _) _ hc16
    have sB3_44 : addf (AccMath.accVec (rowF fl tab (wL L).val (2 * t1.val) (2 * k.val + 1)) (offF fl (wL L).val (2 * t1.val) (2 * k.val + 1)) 3 44) (shapeCast S16 (pair0_lt.sl.v2129_5 d L tab k r g1 g2 hR hin h4) hc16) = AccMath.accVec (rowF fl tab (wL L).val (2 * t1.val) (2 * k.val + 1)) (offF fl (wL L).val (2 * t1.val) (2 * k.val + 1)) 3 45 :=
      acc_step d L fl tab (wL L).val (2 * t1.val) (2 * k.val + 1) 1 _ (hRB _) ⟨44, by decide⟩ ⟨3, by decide⟩ _ rfl _ hwB_44 _ (k1_off48_form ⟨2, by decide⟩ _ _) _ hc16
    have sB3_45 : addf (AccMath.accVec (rowF fl tab (wL L).val (2 * t1.val) (2 * k.val + 1)) (offF fl (wL L).val (2 * t1.val) (2 * k.val + 1)) 3 45) (shapeCast S16 (pair0_lt.sl.v2165_5 d L tab k r g1 g2 hR hin h4) hc16) = AccMath.accVec (rowF fl tab (wL L).val (2 * t1.val) (2 * k.val + 1)) (offF fl (wL L).val (2 * t1.val) (2 * k.val + 1)) 3 46 :=
      acc_step d L fl tab (wL L).val (2 * t1.val) (2 * k.val + 1) 1 _ (hRB _) ⟨45, by decide⟩ ⟨3, by decide⟩ _ rfl _ hwB_45 _ (k1_off49_form ⟨2, by decide⟩ _ _) _ hc16
    have sB3_46 : addf (AccMath.accVec (rowF fl tab (wL L).val (2 * t1.val) (2 * k.val + 1)) (offF fl (wL L).val (2 * t1.val) (2 * k.val + 1)) 3 46) (shapeCast S16 (pair0_lt.sl.v2201_5 d L tab k r g1 g2 hR hin h4) hc16) = AccMath.accVec (rowF fl tab (wL L).val (2 * t1.val) (2 * k.val + 1)) (offF fl (wL L).val (2 * t1.val) (2 * k.val + 1)) 3 47 :=
      acc_step d L fl tab (wL L).val (2 * t1.val) (2 * k.val + 1) 1 _ (hRB _) ⟨46, by decide⟩ ⟨3, by decide⟩ _ rfl _ hwB_46 _ (k1_off50_form ⟨2, by decide⟩ _ _) _ hc16
    have sB3_47 : addf (AccMath.accVec (rowF fl tab (wL L).val (2 * t1.val) (2 * k.val + 1)) (offF fl (wL L).val (2 * t1.val) (2 * k.val + 1)) 3 47) (shapeCast S16 (pair0_lt.sl.v2237_5 d L tab k r g1 g2 hR hin h4) hc16) = AccMath.accVec (rowF fl tab (wL L).val (2 * t1.val) (2 * k.val + 1)) (offF fl (wL L).val (2 * t1.val) (2 * k.val + 1)) 3 48 :=
      acc_step d L fl tab (wL L).val (2 * t1.val) (2 * k.val + 1) 1 _ (hRB _) ⟨47, by decide⟩ ⟨3, by decide⟩ _ rfl _ hwB_47 _ (k1_off51_form ⟨2, by decide⟩ _ _) _ hc16
    have sB3_48 : addf (AccMath.accVec (rowF fl tab (wL L).val (2 * t1.val) (2 * k.val + 1)) (offF fl (wL L).val (2 * t1.val) (2 * k.val + 1)) 3 48) (shapeCast S16 (pair0_lt.sl.v1602 d L tab k r g1 g2 hR hin h4) hc16) = AccMath.accVec (rowF fl tab (wL L).val (2 * t1.val) (2 * k.val + 1)) (offF fl (wL L).val (2 * t1.val) (2 * k.val + 1)) 3 49 :=
      acc_step d L fl tab (wL L).val (2 * t1.val) (2 * k.val + 1) 1 _ (hRB _) ⟨48, by decide⟩ ⟨3, by decide⟩ _ rfl _ hwB_48 _ (k1_off53_form _ _) _ hc16
    have sB3_49 : addf (AccMath.accVec (rowF fl tab (wL L).val (2 * t1.val) (2 * k.val + 1)) (offF fl (wL L).val (2 * t1.val) (2 * k.val + 1)) 3 49) (shapeCast S16 (pair0_lt.sl.v1636 d L tab k r g1 g2 hR hin h4) hc16) = AccMath.accVec (rowF fl tab (wL L).val (2 * t1.val) (2 * k.val + 1)) (offF fl (wL L).val (2 * t1.val) (2 * k.val + 1)) 3 50 :=
      acc_step d L fl tab (wL L).val (2 * t1.val) (2 * k.val + 1) 1 _ (hRB _) ⟨49, by decide⟩ ⟨3, by decide⟩ _ rfl _ hwB_49 _ (k1_off54_form _ _) _ hc16
    have hPB3 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val + 1)) (offF fl (wL L).val (2 * t1.val) (2 * k.val + 1)) 3 0) (shapeCast S16 (pair0_lt.sl.v1697_3 d L tab k r g1 g2 hR hin h4) hc16)) (shapeCast S16 (pair0_lt.sl.v1733_3 d L tab k r g1 g2 hR hin h4) hc16)) (shapeCast S16 (pair0_lt.sl.v1769_3 d L tab k r g1 g2 hR hin h4) hc16)) (shapeCast S16 (pair0_lt.sl.v1805_3 d L tab k r g1 g2 hR hin h4) hc16)) (shapeCast S16 (pair0_lt.sl.v1841_3 d L tab k r g1 g2 hR hin h4) hc16)) (shapeCast S16 (pair0_lt.sl.v1877_3 d L tab k r g1 g2 hR hin h4) hc16)) (shapeCast S16 (pair0_lt.sl.v1913_3 d L tab k r g1 g2 hR hin h4) hc16)) (shapeCast S16 (pair0_lt.sl.v1949_3 d L tab k r g1 g2 hR hin h4) hc16)) (shapeCast S16 (pair0_lt.sl.v1985_3 d L tab k r g1 g2 hR hin h4) hc16)) (shapeCast S16 (pair0_lt.sl.v2021_3 d L tab k r g1 g2 hR hin h4) hc16)) (shapeCast S16 (pair0_lt.sl.v2057_3 d L tab k r g1 g2 hR hin h4) hc16)) (shapeCast S16 (pair0_lt.sl.v2093_3 d L tab k r g1 g2 hR hin h4) hc16)) (shapeCast S16 (pair0_lt.sl.v2129_3 d L tab k r g1 g2 hR hin h4) hc16)) (shapeCast S16 (pair0_lt.sl.v2165_3 d L tab k r g1 g2 hR hin h4) hc16)) (shapeCast S16 (pair0_lt.sl.v2201_3 d L tab k r g1 g2 hR hin h4) hc16)) (shapeCast S16 (pair0_lt.sl.v2237_3 d L tab k r g1 g2 hR hin h4) hc16)) (shapeCast S16 (pair0_lt.sl.v1697_4 d L tab k r g1 g2 hR hin h4) hc16)) (shapeCast S16 (pair0_lt.sl.v1733_4 d L tab k r g1 g2 hR hin h4) hc16)) (shapeCast S16 (pair0_lt.sl.v1769_4 d L tab k r g1 g2 hR hin h4) hc16)) (shapeCast S16 (pair0_lt.sl.v1805_4 d L tab k r g1 g2 hR hin h4) hc16)) (shapeCast S16 (pair0_lt.sl.v1841_4 d L tab k r g1 g2 hR hin h4) hc16)) (shapeCast S16 (pair0_lt.sl.v1877_4 d L tab k r g1 g2 hR hin h4) hc16)) (shapeCast S16 (pair0_lt.sl.v1913_4 d L tab k r g1 g2 hR hin h4) hc16)) (shapeCast S16 (pair0_lt.sl.v1949_4 d L tab k r g1 g2 hR hin h4) hc16)) (shapeCast S16 (pair0_lt.sl.v1985_4 d L tab k r g1 g2 hR hin h4) hc16)) (shapeCast S16 (pair0_lt.sl.v2021_4 d L tab k r g1 g2 hR hin h4) hc16)) (shapeCast S16 (pair0_lt.sl.v2057_4 d L tab k r g1 g2 hR hin h4) hc16)) (shapeCast S16 (pair0_lt.sl.v2093_4 d L tab k r g1 g2 hR hin h4) hc16)) (shapeCast S16 (pair0_lt.sl.v2129_4 d L tab k r g1 g2 hR hin h4) hc16)) (shapeCast S16 (pair0_lt.sl.v2165_4 d L tab k r g1 g2 hR hin h4) hc16)) (shapeCast S16 (pair0_lt.sl.v2201_4 d L tab k r g1 g2 hR hin h4) hc16)) (shapeCast S16 (pair0_lt.sl.v2237_4 d L tab k r g1 g2 hR hin h4) hc16)) (shapeCast S16 (pair0_lt.sl.v1697_5 d L tab k r g1 g2 hR hin h4) hc16)) (shapeCast S16 (pair0_lt.sl.v1733_5 d L tab k r g1 g2 hR hin h4) hc16)) (shapeCast S16 (pair0_lt.sl.v1769_5 d L tab k r g1 g2 hR hin h4) hc16)) (shapeCast S16 (pair0_lt.sl.v1805_5 d L tab k r g1 g2 hR hin h4) hc16)) (shapeCast S16 (pair0_lt.sl.v1841_5 d L tab k r g1 g2 hR hin h4) hc16)) (shapeCast S16 (pair0_lt.sl.v1877_5 d L tab k r g1 g2 hR hin h4) hc16)) (shapeCast S16 (pair0_lt.sl.v1913_5 d L tab k r g1 g2 hR hin h4) hc16)) (shapeCast S16 (pair0_lt.sl.v1949_5 d L tab k r g1 g2 hR hin h4) hc16)) (shapeCast S16 (pair0_lt.sl.v1985_5 d L tab k r g1 g2 hR hin h4) hc16)) (shapeCast S16 (pair0_lt.sl.v2021_5 d L tab k r g1 g2 hR hin h4) hc16)) (shapeCast S16 (pair0_lt.sl.v2057_5 d L tab k r g1 g2 hR hin h4) hc16)) (shapeCast S16 (pair0_lt.sl.v2093_5 d L tab k r g1 g2 hR hin h4) hc16)) (shapeCast S16 (pair0_lt.sl.v2129_5 d L tab k r g1 g2 hR hin h4) hc16)) (shapeCast S16 (pair0_lt.sl.v2165_5 d L tab k r g1 g2 hR hin h4) hc16)) (shapeCast S16 (pair0_lt.sl.v2201_5 d L tab k r g1 g2 hR hin h4) hc16)) (shapeCast S16 (pair0_lt.sl.v2237_5 d L tab k r g1 g2 hR hin h4) hc16)) (shapeCast S16 (pair0_lt.sl.v1602 d L tab k r g1 g2 hR hin h4) hc16)) (shapeCast S16 (pair0_lt.sl.v1636 d L tab k r g1 g2 hR hin h4) hc16)) hc1 x = Spec.bagPartial fl tab (128 * (wL L).val + 16 * (2 * t1.val) + (2 * k.val + 1)) (16 * 3 + (x 2).val) 50 := fun x => by
      rw [sB3_0, sB3_1, sB3_2, sB3_3, sB3_4, sB3_5, sB3_6, sB3_7, sB3_8, sB3_9, sB3_10, sB3_11, sB3_12, sB3_13, sB3_14, sB3_15, sB3_16, sB3_17, sB3_18, sB3_19, sB3_20, sB3_21, sB3_22, sB3_23, sB3_24, sB3_25, sB3_26, sB3_27, sB3_28, sB3_29, sB3_30, sB3_31, sB3_32, sB3_33, sB3_34, sB3_35, sB3_36, sB3_37, sB3_38, sB3_39, sB3_40, sB3_41, sB3_42, sB3_43, sB3_44, sB3_45, sB3_46, sB3_47, sB3_48, sB3_49]; exact payload_ok fl tab (wL L).val (2 * t1.val) (2 * k.val + 1) ⟨3, by decide⟩ hc1 x
    refine ⟨hT0, hV0, hT1, hV1, ?_, ?_⟩
    · exact RowsV_landing0 d L fl tab (by decide) (wL L).val (2 * t1.val) (2 * (k.val + 1)) g1 (k1_off33 k) _ (words_of_TixV d L fl (wL L).val (2 * t1.val) 0 (2 * (k.val + 1)) (by decide) (by omega) g1 hT0 (k1_off33 k) (by rw [k1_off33_eq]; show 128 * k.val + 128 = 1024 * 0 + 64 * (2 * (k.val + 1)); omega)) _ _
    · have K0 := (WbV_iff_WbK d L fl tab (wL L).val (2 * t1.val) 0 (2 * k.val) wb).mp hWb
      have KA := WbK_bag d L fl tab (wL L).val (2 * t1.val) 0 _ wb K0 ⟨2 * k.val, by omega⟩ (k1_off28 k) (k1_off29 k) (k1_off30 k) (k1_off31 k)
        (k1_off28_eq k) (k1_off29_eq k) (k1_off30_eq k) (k1_off31_eq k) (k1_off28_inb k) (k1_off29_inb k) (k1_off30_inb k) (k1_off31_inb k) _ _ _ _ hPA0 hPA1 hPA2 hPA3
      have KB := WbK_bag d L fl tab (wL L).val (2 * t1.val) 0 _ _ KA ⟨2 * k.val + 1, by omega⟩ (k1_off55 k) (k1_off56 k) (k1_off57 k) (k1_off58 k)
        (k1_off55_eq k) (k1_off56_eq k) (k1_off57_eq k) (k1_off58_eq k) (k1_off55_inb k) (k1_off56_inb k) (k1_off57_inb k) (k1_off58_inb k) _ _ _ _ hPB0 hPB1 hPB2 hPB3
      intro g c hg
      refine KB g c ?_
      by_cases h1 : g.val < 2 * k.val
      · exact .inl (.inl h1)
      by_cases h2 : g.val = 2 * k.val
      · exact .inl (.inr (Fin.ext h2))
      · exact .inr (Fin.ext (by show g.val = 2 * k.val + 1; omega))

end Tile

end Cert.Proof.BagB
end
-- ==== Proof.TilePair0cB.lean ====
/-
  One trip of an even block's pair loop on a vector subcore: from what holds before trip `k` to what holds before trip
  `k + 1`.

  The trip waits for the gather of bag `2 k` into slot 0, starts the gather of bag `2 k + 1` into slot 1, sums bag `2 k`'s fifty
  rows (three groups of sixteen and two more, each row read at its column offset in four sixteen-lane pieces) into the
  write-back scratch, waits for the second gather, starts the gather of bag `2 k + 2` into slot 0 — for the last trip, of the
  next block's first bag —, and sums bag `2 k + 1`. Each wait is admissible under what the subcore owes the launch; each
  gather's list lies in range by `TixB`; each extracted column offset passes the body's check by `RvB`.
-/
import proofs.«203835_g19404662243951_cont_8to1_399_35_alg».proof.Proof.TilePreB
import proofs.«203835_g19404662243951_cont_8to1_399_35_alg».proof.Proof.PayB
import proofs.«203835_g19404662243951_cont_8to1_399_35_alg».proof.Proof.TileChkB
import proofs.«203835_g19404662243951_cont_8to1_399_35_alg».proof.Proof.TileMath
import proofs.«203835_g19404662243951_cont_8to1_399_35_alg».proof.Proof.TileInvB
import proofs.«203835_g19404662243951_cont_8to1_399_35_alg».proof.Proof.TilePairValB
import proofs.«203835_g19404662243951_cont_8to1_399_35_alg».proof.Proof.Gen.Kernel.Skeleton
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Lean Elab Tactic Meta in
/-- Reads the printed check at the head of the goal off its name and applies that check's lemma, leaving the word's fact. -/
elab "chk_disch_c" : tactic => withMainContext do
  let g ← getMainGoal
  let t ← instantiateMVars (← g.getType)
  let .const n _ := t.getAppFn | throwError "chk_disch_c: not a check"
  let .str _ last := n | throwError "chk_disch_c: not a check"
  unless last.startsWith "k1_chk" do throwError "chk_disch_c: not a check"
  let idx := last.drop 6
  let lem : Name := `Cert.Proof.TileChkB ++ Name.mkSimple ("chk" ++ idx)
  evalTactic (← `(tactic| first | (refine $(mkIdent lem) ?_) | (refine $(mkIdent lem) _ ?_)))

variable {F : FTy → Type} [FloatOps F]

local notation "𝕄" => MT nD τ sig (HIx 1) (Elt F) ℕ UU ℕ

section Tile

variable (d : Dev nD) (L : grid1.Coords)

set_option maxHeartbeats 0 in
theorem pair0_last (fl : IVec Spec.SFlat 32) (qt : PosShare TreeShare) (tab : FVec F Spec.STab .f32) (O : CellTallies nD τ sig (HIx 1))
    (W0 : Waits sig (HIx 1)) (v2 v3 : BitVec 32) (t1 : Fin k1_t1_loop.trips) (v1385 : BitVec 32) (k : Fin k1_t2_loop.trips) (hk : ¬ k.val < 7) :
    inv0 d L fl qt tab O W0 (2 * t1.val) k.val ⟨⟩
      ⊢ wp frame (wpE (defs₀ (F := F)) 𝒱₀ (thr d L) none) Set.univ
          (k1_t2_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10 v2 v3 0#32 1#32 t1 v1385 k ⟨⟩)
          (inv0 d L fl qt tab O W0 (2 * t1.val) (k.val + 1)) := by
  unfold k1_t2_body
  unfold inv0
  iintro ⟨#Hmw', %r, %g1, %g2, %wb, %o, %ho, ⟨%hT, %hR, %ho_eq, %hV⟩, Hg0, H1, Ht, H3, H2, H4, Hg1, %W', %hW', HO⟩
  have hin := hin_of d L g1 hT
  have h4 := cond4_ge k hk
  have h5 := cond5_ge t1 k hk
  have h8 : k.val < 8 := lt_of_lt_of_eq k.isLt (by decide)
  have hk7 : k.val = 7 := by omega
  sl_exec_parts (disch := first | decide | (chk_disch_c; exact hR _))
  sl_unroll
  sl_exec_parts (disch := first | decide | (chk_disch_c; exact hR _))
  sl_unroll
  sl_exec_parts (disch := first | decide | (chk_disch_c; exact hR _))
  sl_step
  have hmin : min (128 * (k.val + 1)) 1024 = 1024 := by omega
  have hoff : k1_off34 = lo (k.val + 1) := by rw [k1_off34_eq]; unfold lo; rw [hmin]
  isplitl []; · iexact Hmw'
  iexists _; iexists g1; iexists g2; iexists _; iexists k1_off34; iexists (k1_off34_inb t1 k h5)
  isplitr; rotate_left
  · isplitl [Hg0]; · iexact Hg0
    isplitl [H1]; · iexact H1
    isplitl [Ht]; · iexact Ht
    isplitl [H3]; · iexact H3
    isplitl [H2]; · iexact H2
    isplitl [H4]; · iexact H4
    isplitl [Hg1]; · iexact Hg1
    iexists (insert (SemLoc.dma cc1_scratch6.sem, (default : HIx 1)) (insert (SemLoc.dma cc1_scratch5.sem, (default : HIx 1)) W')); isplitr
    · ipureintro; intro p hp
      rcases Finset.mem_insert.mp hp with rfl | hp
      · exact .inr rfl
      rcases Finset.mem_insert.mp hp with rfl | hp
      · exact .inr rfl
      · exact hW' p hp
    · iexact HO
  · ipureintro
    refine ⟨hT, hR, hoff, ?_⟩
    obtain ⟨hT0, hV0, hT1, hV1, hRows, hWb⟩ := hV
    have hk8 : k.val < 8 := lt_of_lt_of_eq k.isLt (by decide)
    have hc16 : S1x1x16.ShapeCasts S16 := by decide
    have hc1 : S16.ShapeCasts S1x1x16 := by decide
    have hRA : ∀ pay : S50x128.Idx → Elt F .f32, RowsV d L fl tab (wL L).val (2 * t1.val) (2 * k.val) 0 (View.write (Elt F) (h1M).view r pay Finset.univ) :=
      fun pay => RowsV_keep0 d L fl tab (wL L).val (2 * t1.val) (2 * k.val) r pay hRows
    have hwB := words_of_TixV d L fl (wL L).val (2 * t1.val) 0 (2 * k.val + 1) (by decide) (by omega) g1 hT0 (k1_off7 k)
      (by rw [k1_off7_eq]; show 128 * k.val + 64 = 1024 * 0 + 64 * (2 * k.val + 1); omega)
    have hRB0 := RowsV_landing1 d L fl tab (by decide) (wL L).val (2 * t1.val) (2 * k.val + 1) g1 (k1_off7 k) (k1_off7_inb k) hwB (hin _ _) r
    have hRB := fun pay : S50x128.Idx → Elt F .f32 => RowsV_keep1 d L fl tab (wL L).val (2 * t1.val) (2 * k.val + 1) _ pay hRB0
    have hwA_0 : pair0_last.sl.v1667 d L k g2 = Spec.tcol (blkWord fl (wL L).val (2 * t1.val) (64 * (2 * k.val) + 0)) := by
      refine (rv_extract d L g2 (k1_off8 k ⟨0, by decide⟩) (k1_off8_inb k ⟨0, by decide⟩) (by decide) 0 (by decide) (by decide) (by decide)).trans ?_
      exact rv_word d L fl (wL L).val (2 * t1.val) 0 (2 * k.val) 0 (by decide) (by omega) (by decide) g2 hV0 _
        (by rw [k1_off8_eq k ⟨0, by decide⟩]; show 128 * k.val + 16 * 0 + 0 = 1024 * 0 + 64 * (2 * k.val) + 0; omega) _
    have hwA_1 : pair0_last.sl.v1703 d L k g2 = Spec.tcol (blkWord fl (wL L).val (2 * t1.val) (64 * (2 * k.val) + 1)) := by
      refine (rv_extract d L g2 (k1_off8 k ⟨0, by decide⟩) (k1_off8_inb k ⟨0, by decide⟩) (by decide) 1 (by decide) (by decide) (by decide)).trans ?_
      exact rv_word d L fl (wL L).val (2 * t1.val) 0 (2 * k.val) 1 (by decide) (by omega) (by decide) g2 hV0 _
        (by rw [k1_off8_eq k ⟨0, by decide⟩]; show 128 * k.val + 16 * 0 + 1 = 1024 * 0 + 64 * (2 * k.val) + 1; omega) _
    have hwA_2 : pair0_last.sl.v1739 d L k g2 = Spec.tcol (blkWord fl (wL L).val (2 * t1.val) (64 * (2 * k.val) + 2)) := by
      refine (rv_extract d L g2 (k1_off8 k ⟨0, by decide⟩) (k1_off8_inb k ⟨0, by decide⟩) (by decide) 2 (by decide) (by decide) (by decide)).trans ?_
      exact rv_word d L fl (wL L).val (2 * t1.val) 0 (2 * k.val) 2 (by decide) (by omega) (by decide) g2 hV0 _
        (by rw [k1_off8_eq k ⟨0, by decide⟩]; show 128 * k.val + 16 * 0 + 2 = 1024 * 0 + 64 * (2 * k.val) + 2; omega) _
    have hwA_3 : pair0_last.sl.v1775 d L k g2 = Spec.tcol (blkWord fl (wL L).val (2 * t1.val) (64 * (2 * k.val) + 3)) := by
      refine (rv_extract d L g2 (k1_off8 k ⟨0, by decide⟩) (k1_off8_inb k ⟨0, by decide⟩) (by decide) 3 (by decide) (by decide) (by decide)).trans ?_
      exact rv_word d L fl (wL L).val (2 * t1.val) 0 (2 * k.val) 3 (by decide) (by omega) (by decide) g2 hV0 _
        (by rw [k1_off8_eq k ⟨0, by decide⟩]; show 128 * k.val + 16 * 0 + 3 = 1024 * 0 + 64 * (2 * k.val) + 3; omega) _
    have hwA_4 : pair0_last.sl.v1811 d L k g2 = Spec.tcol (blkWord fl (wL L).val (2 * t1.val) (64 * (2 * k.val) + 4)) := by
      refine (rv_extract d L g2 (k1_off8 k ⟨0, by decide⟩) (k1_off8_inb k ⟨0, by decide⟩) (by decide) 4 (by decide) (by decide) (by decide)).trans ?_
      exact rv_word d L fl (wL L).val (2 * t1.val) 0 (2 * k.val) 4 (by decide) (by omega) (by decide) g2 hV0 _
        (by rw [k1_off8_eq k ⟨0, by decide⟩]; show 128 * k.val + 16 * 0 + 4 = 1024 * 0 + 64 * (2 * k.val) + 4; omega) _
    have hwA_5 : pair0_last.sl.v1847 d L k g2 = Spec.tcol (blkWord fl (wL L).val (2 * t1.val) (64 * (2 * k.val) + 5)) := by
      refine (rv_extract d L g2 (k1_off8 k ⟨0, by decide⟩) (k1_off8_inb k ⟨0, by decide⟩) (by decide) 5 (by decide) (by decide) (by decide)).trans ?_
      exact rv_word d L fl (wL L).val (2 * t1.val) 0 (2 * k.val) 5 (by decide) (by omega) (by decide) g2 hV0 _
        (by rw [k1_off8_eq k ⟨0, by decide⟩]; show 128 * k.val + 16 * 0 + 5 = 1024 * 0 + 64 * (2 * k.val) + 5; omega) _
    have hwA_6 : pair0_last.sl.v1883 d L k g2 = Spec.tcol (blkWord fl (wL L).val (2 * t1.val) (64 * (2 * k.val) + 6)) := by
      refine (rv_extract d L g2 (k1_off8 k ⟨0, by decide⟩) (k1_off8_inb k ⟨0, by decide⟩) (by decide) 6 (by decide) (by decide) (by decide)).trans ?_
      exact rv_word d L fl (wL L).val (2 * t1.val) 0 (2 * k.val) 6 (by decide) (by omega) (by decide) g2 hV0 _
        (by rw [k1_off8_eq k ⟨0, by decide⟩]; show 128 * k.val + 16 * 0 + 6 = 1024 * 0 + 64 * (2 * k.val) + 6; omega) _
    have hwA_7 : pair0_last.sl.v1919 d L k g2 = Spec.tcol (blkWord fl (wL L).val (2 * t1.val) (64 * (2 * k.val) + 7)) := by
      refine (rv_extract d L g2 (k1_off8 k ⟨0, by decide⟩) (k1_off8_inb k ⟨0, by decide⟩) (by decide) 7 (by decide) (by decide) (by decide)).trans ?_
      exact rv_word d L fl (wL L).val (2 * t1.val) 0 (2 * k.val) 7 (by decide) (by omega) (by decide) g2 hV0 _
        (by rw [k1_off8_eq k ⟨0, by decide⟩]; show 128 * k.val + 16 * 0 + 7 = 1024 * 0 + 64 * (2 * k.val) + 7; omega) _
    have hwA_8 : pair0_last.sl.v1955 d L k g2 = Spec.tcol (blkWord fl (wL L).val (2 * t1.val) (64 * (2 * k.val) + 8)) := by
      refine (rv_extract d L g2 (k1_off8 k ⟨0, by decide⟩) (k1_off8_inb k ⟨0, by decide⟩) (by decide) 8 (by decide) (by decide) (by decide)).trans ?_
      exact rv_word d L fl (wL L).val (2 * t1.val) 0 (2 * k.val) 8 (by decide) (by omega) (by decide) g2 hV0 _
        (by rw [k1_off8_eq k ⟨0, by decide⟩]; show 128 * k.val + 16 * 0 + 8 = 1024 * 0 + 64 * (2 * k.val) + 8; omega) _
    have hwA_9 : pair0_last.sl.v1991 d L k g2 = Spec.tcol (blkWord fl (wL L).val (2 * t1.val) (64 * (2 * k.val) + 9)) := by
      refine (rv_extract d L g2 (k1_off8 k ⟨0, by decide⟩) (k1_off8_inb k ⟨0, by decide⟩) (by decide) 9 (by decide) (by decide) (by decide)).trans ?_
      exact rv_word d L fl (wL L).val (2 * t1.val) 0 (2 * k.val) 9 (by decide) (by omega) (by decide) g2 hV0 _
        (by rw [k1_off8_eq k ⟨0, by decide⟩]; show 128 * k.val + 16 * 0 + 9 = 1024 * 0 + 64 * (2 * k.val) + 9; omega) _
    have hwA_10 : pair0_last.sl.v2027 d L k g2 = Spec.tcol (blkWord fl (wL L).val (2 * t1.val) (64 * (2 * k.val) + 10)) := by
      refine (rv_extract d L g2 (k1_off8 k ⟨0, by decide⟩) (k1_off8_inb k ⟨0, by decide⟩) (by decide) 10 (by decide) (by decide) (by decide)).trans ?_
      exact rv_word d L fl (wL L).val (2 * t1.val) 0 (2 * k.val) 10 (by decide) (by omega) (by decide) g2 hV0 _
        (by rw [k1_off8_eq k ⟨0, by decide⟩]; show 128 * k.val + 16 * 0 + 10 = 1024 * 0 + 64 * (2 * k.val) + 10; omega) _
    have hwA_11 : pair0_last.sl.v2063 d L k g2 = Spec.tcol (blkWord fl (wL L).val (2 * t1.val) (64 * (2 * k.val) + 11)) := by
      refine (rv_extract d L g2 (k1_off8 k ⟨0, by decide⟩) (k1_off8_inb k ⟨0, by decide⟩) (by decide) 11 (by decide) (by decide) (by decide)).trans ?_
      exact rv_word d L fl (wL L).val (2 * t1.val) 0 (2 * k.val) 11 (by decide) (by omega) (by decide) g2 hV0 _
        (by rw [k1_off8_eq k ⟨0, by decide⟩]; show 128 * k.val + 16 * 0 + 11 = 1024 * 0 + 64 * (2 * k.val) + 11; omega) _
    have hwA_12 : pair0_last.sl.v2099 d L k g2 = Spec.tcol (blkWord fl (wL L).val (2 * t1.val) (64 * (2 * k.val) + 12)) := by
      refine (rv_extract d L g2 (k1_off8 k ⟨0, by decide⟩) (k1_off8_inb k ⟨0, by decide⟩) (by decide) 12 (by decide) (by decide) (by decide)).trans ?_
      exact rv_word d L fl (wL L).val (2 * t1.val) 0 (2 * k.val) 12 (by decide) (by omega) (by decide) g2 hV0 _
        (by rw [k1_off8_eq k ⟨0, by decide⟩]; show 128 * k.val + 16 * 0 + 12 = 1024 * 0 + 64 * (2 * k.val) + 12; omega) _
    have hwA_13 : pair0_last.sl.v2135 d L k g2 = Spec.tcol (blkWord fl (wL L).val (2 * t1.val) (64 * (2 * k.val) + 13)) := by
      refine (rv_extract d L g2 (k1_off8 k ⟨0, by decide⟩) (k1_off8_inb k ⟨0, by decide⟩) (by decide) 13 (by decide) (by decide) (by decide)).trans ?_
      exact rv_word d L fl (wL L).val (2 * t1.val) 0 (2 * k.val) 13 (by decide) (by omega) (by decide) g2 hV0 _
        (by rw [k1_off8_eq k ⟨0, by decide⟩]; show 128 * k.val + 16 * 0 + 13 = 1024 * 0 + 64 * (2 * k.val) + 13; omega) _
    have hwA_14 : pair0_last.sl.v2171 d L k g2 = Spec.tcol (blkWord fl (wL L).val (2 * t1.val) (64 * (2 * k.val) + 14)) := by
      refine (rv_extract d L g2 (k1_off8 k ⟨0, by decide⟩) (k1_off8_inb k ⟨0, by decide⟩) (by decide) 14 (by decide) (by decide) (by decide)).trans ?_
      exact rv_word d L fl (wL L).val (2 * t1.val) 0 (2 * k.val) 14 (by decide) (by omega) (by decide) g2 hV0 _
        (by rw [k1_off8_eq k ⟨0, by decide⟩]; show 128 * k.val + 16 * 0 + 14 = 1024 * 0 + 64 * (2 * k.val) + 14; omega) _
    have hwA_15 : pair0_last.sl.v2207 d L k g2 = Spec.tcol (blkWord fl (wL L).val (2 * t1.val) (64 * (2 * k.val) + 15)) := by
      refine (rv_extract d L g2 (k1_off8 k ⟨0, by decide⟩) (k1_off8_inb k ⟨0, by decide⟩) (by decide) 15 (by decide) (by decide) (by decide)).trans ?_
      exact rv_word d L fl (wL L).val (2 * t1.val) 0 (2 * k.val) 15 (by decide) (by omega) (by decide) g2 hV0 _
        (by rw [k1_off8_eq k ⟨0, by decide⟩]; show 128 * k.val + 16 * 0 + 15 = 1024 * 0 + 64 * (2 * k.val) + 15; omega) _
    have hwA_16 : pair0_last.sl.v1667_1 d L k g2 = Spec.tcol (blkWord fl (wL L).val (2 * t1.val) (64 * (2 * k.val) + 16)) := by
      refine (rv_extract d L g2 (k1_off8 k ⟨1, by decide⟩) (k1_off8_inb k ⟨1, by decide⟩) (by decide) 0 (by decide) (by decide) (by decide)).trans ?_
      exact rv_word d L fl (wL L).val (2 * t1.val) 0 (2 * k.val) 16 (by decide) (by omega) (by decide) g2 hV0 _
        (by rw [k1_off8_eq k ⟨1, by decide⟩]; show 128 * k.val + 16 * 1 + 0 = 1024 * 0 + 64 * (2 * k.val) + 16; omega) _
    have hwA_17 : pair0_last.sl.v1703_1 d L k g2 = Spec.tcol (blkWord fl (wL L).val (2 * t1.val) (64 * (2 * k.val) + 17)) := by
      refine (rv_extract d L g2 (k1_off8 k ⟨1, by decide⟩) (k1_off8_inb k ⟨1, by decide⟩) (by decide) 1 (by decide) (by decide) (by decide)).trans ?_
      exact rv_word d L fl (wL L).val (2 * t1.val) 0 (2 * k.val) 17 (by decide) (by omega) (by decide) g2 hV0 _
        (by rw [k1_off8_eq k ⟨1, by decide⟩]; show 128 * k.val + 16 * 1 + 1 = 1024 * 0 + 64 * (2 * k.val) + 17; omega) _
    have hwA_18 : pair0_last.sl.v1739_1 d L k g2 = Spec.tcol (blkWord fl (wL L).val (2 * t1.val) (64 * (2 * k.val) + 18)) := by
      refine (rv_extract d L g2 (k1_off8 k ⟨1, by decide⟩) (k1_off8_inb k ⟨1, by decide⟩) (by decide) 2 (by decide) (by decide) (by decide)).trans ?_
      exact rv_word d L fl (wL L).val (2 * t1.val) 0 (2 * k.val) 18 (by decide) (by omega) (by decide) g2 hV0 _
        (by rw [k1_off8_eq k ⟨1, by decide⟩]; show 128 * k.val + 16 * 1 + 2 = 1024 * 0 + 64 * (2 * k.val) + 18; omega) _
    have hwA_19 : pair0_last.sl.v1775_1 d L k g2 = Spec.tcol (blkWord fl (wL L).val (2 * t1.val) (64 * (2 * k.val) + 19)) := by
      refine (rv_extract d L g2 (k1_off8 k ⟨1, by decide⟩) (k1_off8_inb k ⟨1, by decide⟩) (by decide) 3 (by decide) (by decide) (by decide)).trans ?_
      exact rv_word d L fl (wL L).val (2 * t1.val) 0 (2 * k.val) 19 (by decide) (by omega) (by decide) g2 hV0 _
        (by rw [k1_off8_eq k ⟨1, by decide⟩]; show 128 * k.val + 16 * 1 + 3 = 1024 * 0 + 64 * (2 * k.val) + 19; omega) _
    have hwA_20 : pair0_last.sl.v1811_1 d L k g2 = Spec.tcol (blkWord fl (wL L).val (2 * t1.val) (64 * (2 * k.val) + 20)) := by
      refine (rv_extract d L g2 (k1_off8 k ⟨1, by decide⟩) (k1_off8_inb k ⟨1, by decide⟩) (by decide) 4 (by decide) (by decide) (by decide)).trans ?_
      exact rv_word d L fl (wL L).val (2 * t1.val) 0 (2 * k.val) 20 (by decide) (by omega) (by decide) g2 hV0 _
        (by rw [k1_off8_eq k ⟨1, by decide⟩]; show 128 * k.val + 16 * 1 + 4 = 1024 * 0 + 64 * (2 * k.val) + 20; omega) _
    have hwA_21 : pair0_last.sl.v1847_1 d L k g2 = Spec.tcol (blkWord fl (wL L).val (2 * t1.val) (64 * (2 * k.val) + 21)) := by
      refine (rv_extract d L g2 (k1_off8 k ⟨1, by decide⟩) (k1_off8_inb k ⟨1, by decide⟩) (by decide) 5 (by decide) (by decide) (by decide)).trans ?_
      exact rv_word d L fl (wL L).val (2 * t1.val) 0 (2 * k.val) 21 (by decide) (by omega) (by decide) g2 hV0 _
        (by rw [k1_off8_eq k ⟨1, by decide⟩]; show 128 * k.val + 16 * 1 + 5 = 1024 * 0 + 64 * (2 * k.val) + 21; omega) _
    have hwA_22 : pair0_last.sl.v1883_1 d L k g2 = Spec.tcol (blkWord fl (wL L).val (2 * t1.val) (64 * (2 * k.val) + 22)) := by
      refine (rv_extract d L g2 (k1_off8 k ⟨1, by decide⟩) (k1_off8_inb k ⟨1, by decide⟩) (by decide) 6 (by decide) (by decide) (by decide)).trans ?_
      exact rv_word d L fl (wL L).val (2 * t1.val) 0 (2 * k.val) 22 (by decide) (by omega) (by decide) g2 hV0 _
        (by rw [k1_off8_eq k ⟨1, by decide⟩]; show 128 * k.val + 16 * 1 + 6 = 1024 * 0 + 64 * (2 * k.val) + 22; omega) _
    have hwA_23 : pair0_last.sl.v1919_1 d L k g2 = Spec.tcol (blkWord fl (wL L).val (2 * t1.val) (64 * (2 * k.val) + 23)) := by
      refine (rv_extract d L g2 (k1_off8 k ⟨1, by decide⟩) (k1_off8_inb k ⟨1, by decide⟩) (by decide) 7 (by decide) (by decide) (by decide)).trans ?_
      exact rv_word d L fl (wL L).val (2 * t1.val) 0 (2 * k.val) 23 (by decide) (by omega) (by decide) g2 hV0 _
        (by rw [k1_off8_eq k ⟨1, by decide⟩]; show 128 * k.val + 16 * 1 + 7 = 1024 * 0 + 64 * (2 * k.val) + 23; omega) _
    have hwA_24 : pair0_last.sl.v1955_1 d L k g2 = Spec.tcol (blkWord fl (wL L).val (2 * t1.val) (64 * (2 * k.val) + 24)) := by
      refine (rv_extract d L g2 (k1_off8 k ⟨1, by decide⟩) (k1_off8_inb k ⟨1, by decide⟩) (by decide) 8 (by decide) (by decide) (by decide)).trans ?_
      exact rv_word d L fl (wL L).val (2 * t1.val) 0 (2 * k.val) 24 (by decide) (by omega) (by decide) g2 hV0 _
        (by rw [k1_off8_eq k ⟨1, by decide⟩]; show 128 * k.val + 16 * 1 + 8 = 1024 * 0 + 64 * (2 * k.val) + 24; omega) _
    have hwA_25 : pair0_last.sl.v1991_1 d L k g2 = Spec.tcol (blkWord fl (wL L).val (2 * t1.val) (64 * (2 * k.val) + 25)) := by
      refine (rv_extract d L g2 (k1_off8 k ⟨1, by decide⟩) (k1_off8_inb k ⟨1, by decide⟩) (by decide) 9 (by decide) (by decide) (by decide)).trans ?_
      exact rv_word d L fl (wL L).val (2 * t1.val) 0 (2 * k.val) 25 (by decide) (by omega) (by decide) g2 hV0 _
        (by rw [k1_off8_eq k ⟨1, by decide⟩]; show 128 * k.val + 16 * 1 + 9 = 1024 * 0 + 64 * (2 * k.val) + 25; omega) _
    have hwA_26 : pair0_last.sl.v2027_1 d L k g2 = Spec.tcol (blkWord fl (wL L).val (2 * t1.val) (64 * (2 * k.val) + 26)) := by
      refine (rv_extract d L g2 (k1_off8 k ⟨1, by decide⟩) (k1_off8_inb k ⟨1, by decide⟩) (by decide) 10 (by decide) (by decide) (by decide)).trans ?_
      exact rv_word d L fl (wL L).val (2 * t1.val) 0 (2 * k.val) 26 (by decide) (by omega) (by decide) g2 hV0 _
        (by rw [k1_off8_eq k ⟨1, by decide⟩]; show 128 * k.val + 16 * 1 + 10 = 1024 * 0 + 64 * (2 * k.val) + 26; omega) _
    have hwA_27 : pair0_last.sl.v2063_1 d L k g2 = Spec.tcol (blkWord fl (wL L).val (2 * t1.val) (64 * (2 * k.val) + 27)) := by
      refine (rv_extract d L g2 (k1_off8 k ⟨1, by decide⟩) (k1_off8_inb k ⟨1, by decide⟩) (by decide) 11 (by decide) (by decide) (by decide)).trans ?_
      exact rv_word d L fl (wL L).val (2 * t1.val) 0 (2 * k.val) 27 (by decide) (by omega) (by decide) g2 hV0 _
        (by rw [k1_off8_eq k ⟨1, by decide⟩]; show 128 * k.val + 16 * 1 + 11 = 1024 * 0 + 64 * (2 * k.val) + 27; omega) _
    have hwA_28 : pair0_last.sl.v2099_1 d L k g2 = Spec.tcol (blkWord fl (wL L).val (2 * t1.val) (64 * (2 * k.val) + 28)) := by
      refine (rv_extract d L g2 (k1_off8 k ⟨1, by decide⟩) (k1_off8_inb k ⟨1, by decide⟩) (by decide) 12 (by decide) (by decide) (by decide)).trans ?_
      exact rv_word d L fl (wL L).val (2 * t1.val) 0 (2 * k.val) 28 (by decide) (by omega) (by decide) g2 hV0 _
        (by rw [k1_off8_eq k ⟨1, by decide⟩]; show 128 * k.val + 16 * 1 + 12 = 1024 * 0 + 64 * (2 * k.val) + 28; omega) _
    have hwA_29 : pair0_last.sl.v2135_1 d L k g2 = Spec.tcol (blkWord fl (wL L).val (2 * t1.val) (64 * (2 * k.val) + 29)) := by
      refine (rv_extract d L g2 (k1_off8 k ⟨1, by decide⟩) (k1_off8_inb k ⟨1, by decide⟩) (by decide) 13 (by decide) (by decide) (by decide)).trans ?_
      exact rv_word d L fl (wL L).val (2 * t1.val) 0 (2 * k.val) 29 (by decide) (by omega) (by decide) g2 hV0 _
        (by rw [k1_off8_eq k ⟨1, by decide⟩]; show 128 * k.val + 16 * 1 + 13 = 1024 * 0 + 64 * (2 * k.val) + 29; omega) _
    have hwA_30 : pair0_last.sl.v2171_1 d L k g2 = Spec.tcol (blkWord fl (wL L).val (2 * t1.val) (64 * (2 * k.val) + 30)) := by
      refine (rv_extract d L g2 (k1_off8 k ⟨1, by decide⟩) (k1_off8_inb k ⟨1, by decide⟩) (by decide) 14 (by decide) (by decide) (by decide)).trans ?_
      exact rv_word d L fl (wL L).val (2 * t1.val) 0 (2 * k.val) 30 (by decide) (by omega) (by decide) g2 hV0 _
        (by rw [k1_off8_eq k ⟨1, by decide⟩]; show 128 * k.val + 16 * 1 + 14 = 1024 * 0 + 64 * (2 * k.val) + 30; omega) _
    have hwA_31 : pair0_last.sl.v2207_1 d L k g2 = Spec.tcol (blkWord fl (wL L).val (2 * t1.val) (64 * (2 * k.val) + 31)) := by
      refine (rv_extract d L g2 (k1_off8 k ⟨1, by decide⟩) (k1_off8_inb k ⟨1, by decide⟩) (by decide) 15 (by decide) (by decide) (by decide)).trans ?_
      exact rv_word d L fl (wL L).val (2 * t1.val) 0 (2 * k.val) 31 (by decide) (by omega) (by decide) g2 hV0 _
        (by rw [k1_off8_eq k ⟨1, by decide⟩]; show 128 * k.val + 16 * 1 + 15 = 1024 * 0 + 64 * (2 * k.val) + 31; omega) _
    have hwA_32 : pair0_last.sl.v1667_2 d L k g2 = Spec.tcol (blkWord fl (wL L).val (2 * t1.val) (64 * (2 * k.val) + 32)) := by
      refine (rv_extract d L g2 (k1_off8 k ⟨2, by decide⟩) (k1_off8_inb k ⟨2, by decide⟩) (by decide) 0 (by decide) (by decide) (by decide)).trans ?_
      exact rv_word d L fl (wL L).val (2 * t1.val) 0 (2 * k.val) 32 (by decide) (by omega) (by decide) g2 hV0 _
        (by rw [k1_off8_eq k ⟨2, by decide⟩]; show 128 * k.val + 16 * 2 + 0 = 1024 * 0 + 64 * (2 * k.val) + 32; omega) _
    have hwA_33 : pair0_last.sl.v1703_2 d L k g2 = Spec.tcol (blkWord fl (wL L).val (2 * t1.val) (64 * (2 * k.val) + 33)) := by
      refine (rv_extract d L g2 (k1_off8 k ⟨2, by decide⟩) (k1_off8_inb k ⟨2, by decide⟩) (by decide) 1 (by decide) (by decide) (by decide)).trans ?_
      exact rv_word d L fl (wL L).val (2 * t1.val) 0 (2 * k.val) 33 (by decide) (by omega) (by decide) g2 hV0 _
        (by rw [k1_off8_eq k ⟨2, by decide⟩]; show 128 * k.val + 16 * 2 + 1 = 1024 * 0 + 64 * (2 * k.val) + 33; omega) _
    have hwA_34 : pair0_last.sl.v1739_2 d L k g2 = Spec.tcol (blkWord fl (wL L).val (2 * t1.val) (64 * (2 * k.val) + 34)) := by
      refine (rv_extract d L g2 (k1_off8 k ⟨2, by decide⟩) (k1_off8_inb k ⟨2, by decide⟩) (by decide) 2 (by decide) (by decide) (by decide)).trans ?_
      exact rv_word d L fl (wL L).val (2 * t1.val) 0 (2 * k.val) 34 (by decide) (by omega) (by decide) g2 hV0 _
        (by rw [k1_off8_eq k ⟨2, by decide⟩]; show 128 * k.val + 16 * 2 + 2 = 1024 * 0 + 64 * (2 * k.val) + 34; omega) _
    have hwA_35 : pair0_last.sl.v1775_2 d L k g2 = Spec.tcol (blkWord fl (wL L).val (2 * t1.val) (64 * (2 * k.val) + 35)) := by
      refine (rv_extract d L g2 (k1_off8 k ⟨2, by decide⟩) (k1_off8_inb k ⟨2, by decide⟩) (by decide) 3 (by decide) (by decide) (by decide)).trans ?_
      exact rv_word d L fl (wL L).val (2 * t1.val) 0 (2 * k.val) 35 (by decide) (by omega) (by decide) g2 hV0 _
        (by rw [k1_off8_eq k ⟨2, by decide⟩]; show 128 * k.val + 16 * 2 + 3 = 1024 * 0 + 64 * (2 * k.val) + 35; omega) _
    have hwA_36 : pair0_last.sl.v1811_2 d L k g2 = Spec.tcol (blkWord fl (wL L).val (2 * t1.val) (64 * (2 * k.val) + 36)) := by
      refine (rv_extract d L g2 (k1_off8 k ⟨2, by decide⟩) (k1_off8_inb k ⟨2, by decide⟩) (by decide) 4 (by decide) (by decide) (by decide)).trans ?_
      exact rv_word d L fl (wL L).val (2 * t1.val) 0 (2 * k.val) 36 (by decide) (by omega) (by decide) g2 hV0 _
        (by rw [k1_off8_eq k ⟨2, by decide⟩]; show 128 * k.val + 16 * 2 + 4 = 1024 * 0 + 64 * (2 * k.val) + 36; omega) _
    have hwA_37 : pair0_last.sl.v1847_2 d L k g2 = Spec.tcol (blkWord fl (wL L).val (2 * t1.val) (64 * (2 * k.val) + 37)) := by
      refine (rv_extract d L g2 (k1_off8 k ⟨2, by decide⟩) (k1_off8_inb k ⟨2, by decide⟩) (by decide) 5 (by decide) (by decide) (by decide)).trans ?_
      exact rv_word d L fl (wL L).val (2 * t1.val) 0 (2 * k.val) 37 (by decide) (by omega) (by decide) g2 hV0 _
        (by rw [k1_off8_eq k ⟨2, by decide⟩]; show 128 * k.val + 16 * 2 + 5 = 1024 * 0 + 64 * (2 * k.val) + 37; omega) _
    have hwA_38 : pair0_last.sl.v1883_2 d L k g2 = Spec.tcol (blkWord fl (wL L).val (2 * t1.val) (64 * (2 * k.val) + 38)) := by
      refine (rv_extract d L g2 (k1_off8 k ⟨2, by decide⟩) (k1_off8_inb k ⟨2, by decide⟩) (by decide) 6 (by decide) (by decide) (by decide)).trans ?_
      exact rv_word d L fl (wL L).val (2 * t1.val) 0 (2 * k.val) 38 (by decide) (by omega) (by decide) g2 hV0 _
        (by rw [k1_off8_eq k ⟨2, by decide⟩]; show 128 * k.val + 16 * 2 + 6 = 1024 * 0 + 64 * (2 * k.val) + 38; omega) _
    have hwA_39 : pair0_last.sl.v1919_2 d L k g2 = Spec.tcol (blkWord fl (wL L).val (2 * t1.val) (64 * (2 * k.val) + 39)) := by
      refine (rv_extract d L g2 (k1_off8 k ⟨2, by decide⟩) (k1_off8_inb k ⟨2, by decide⟩) (by decide) 7 (by decide) (by decide) (by decide)).trans ?_
      exact rv_word d L fl (wL L).val (2 * t1.val) 0 (2 * k.val) 39 (by decide) (by omega) (by decide) g2 hV0 _
        (by rw [k1_off8_eq k ⟨2, by decide⟩]; show 128 * k.val + 16 * 2 + 7 = 1024 * 0 + 64 * (2 * k.val) + 39; omega) _
    have hwA_40 : pair0_last.sl.v1955_2 d L k g2 = Spec.tcol (blkWord fl (wL L).val (2 * t1.val) (64 * (2 * k.val) + 40)) := by
      refine (rv_extract d L g2 (k1_off8 k ⟨2, by decide⟩) (k1_off8_inb k ⟨2, by decide⟩) (by decide) 8 (by decide) (by decide) (by decide)).trans ?_
      exact rv_word d L fl (wL L).val (2 * t1.val) 0 (2 * k.val) 40 (by decide) (by omega) (by decide) g2 hV0 _
        (by rw [k1_off8_eq k ⟨2, by decide⟩]; show 128 * k.val + 16 * 2 + 8 = 1024 * 0 + 64 * (2 * k.val) + 40; omega) _
    have hwA_41 : pair0_last.sl.v1991_2 d L k g2 = Spec.tcol (blkWord fl (wL L).val (2 * t1.val) (64 * (2 * k.val) + 41)) := by
      refine (rv_extract d L g2 (k1_off8 k ⟨2, by decide⟩) (k1_off8_inb k ⟨2, by decide⟩) (by decide) 9 (by decide) (by decide) (by decide)).trans ?_
      exact rv_word d L fl (wL L).val (2 * t1.val) 0 (2 * k.val) 41 (by decide) (by omega) (by decide) g2 hV0 _
        (by rw [k1_off8_eq k ⟨2, by decide⟩]; show 128 * k.val + 16 * 2 + 9 = 1024 * 0 + 64 * (2 * k.val) + 41; omega) _
    have hwA_42 : pair0_last.sl.v2027_2 d L k g2 = Spec.tcol (blkWord fl (wL L).val (2 * t1.val) (64 * (2 * k.val) + 42)) := by
      refine (rv_extract d L g2 (k1_off8 k ⟨2, by decide⟩) (k1_off8_inb k ⟨2, by decide⟩) (by decide) 10 (by decide) (by decide) (by decide)).trans ?_
      exact rv_word d L fl (wL L).val (2 * t1.val) 0 (2 * k.val) 42 (by decide) (by omega) (by decide) g2 hV0 _
        (by rw [k1_off8_eq k ⟨2, by decide⟩]; show 128 * k.val + 16 * 2 + 10 = 1024 * 0 + 64 * (2 * k.val) + 42; omega) _
    have hwA_43 : pair0_last.sl.v2063_2 d L k g2 = Spec.tcol (blkWord fl (wL L).val (2 * t1.val) (64 * (2 * k.val) + 43)) := by
      refine (rv_extract d L g2 (k1_off8 k ⟨2, by decide⟩) (k1_off8_inb k ⟨2, by decide⟩) (by decide) 11 (by decide) (by decide) (by decide)).trans ?_
      exact rv_word d L fl (wL L).val (2 * t1.val) 0 (2 * k.val) 43 (by decide) (by omega) (by decide) g2 hV0 _
        (by rw [k1_off8_eq k ⟨2, by decide⟩]; show 128 * k.val + 16 * 2 + 11 = 1024 * 0 + 64 * (2 * k.val) + 43; omega) _
    have hwA_44 : pair0_last.sl.v2099_2 d L k g2 = Spec.tcol (blkWord fl (wL L).val (2 * t1.val) (64 * (2 * k.val) + 44)) := by
      refine (rv_extract d L g2 (k1_off8 k ⟨2, by decide⟩) (k1_off8_inb k ⟨2, by decide⟩) (by decide) 12 (by decide) (by decide) (by decide)).trans ?_
      exact rv_word d L fl (wL L).val (2 * t1.val) 0 (2 * k.val) 44 (by decide) (by omega) (by decide) g2 hV0 _
        (by rw [k1_off8_eq k ⟨2, by decide⟩]; show 128 * k.val + 16 * 2 + 12 = 1024 * 0 + 64 * (2 * k.val) + 44; omega) _
    have hwA_45 : pair0_last.sl.v2135_2 d L k g2 = Spec.tcol (blkWord fl (wL L).val (2 * t1.val) (64 * (2 * k.val) + 45)) := by
      refine (rv_extract d L g2 (k1_off8 k ⟨2, by decide⟩) (k1_off8_inb k ⟨2, by decide⟩) (by decide) 13 (by decide) (by decide) (by decide)).trans ?_
      exact rv_word d L fl (wL L).val (2 * t1.val) 0 (2 * k.val) 45 (by decide) (by omega) (by decide) g2 hV0 _
        (by rw [k1_off8_eq k ⟨2, by decide⟩]; show 128 * k.val + 16 * 2 + 13 = 1024 * 0 + 64 * (2 * k.val) + 45; omega) _
    have hwA_46 : pair0_last.sl.v2171_2 d L k g2 = Spec.tcol (blkWord fl (wL L).val (2 * t1.val) (64 * (2 * k.val) + 46)) := by
      refine (rv_extract d L g2 (k1_off8 k ⟨2, by decide⟩) (k1_off8_inb k ⟨2, by decide⟩) (by decide) 14 (by decide) (by decide) (by decide)).trans ?_
      exact rv_word d L fl (wL L).val (2 * t1.val) 0 (2 * k.val) 46 (by decide) (by omega) (by decide) g2 hV0 _
        (by rw [k1_off8_eq k ⟨2, by decide⟩]; show 128 * k.val + 16 * 2 + 14 = 1024 * 0 + 64 * (2 * k.val) + 46; omega) _
    have hwA_47 : pair0_last.sl.v2207_2 d L k g2 = Spec.tcol (blkWord fl (wL L).val (2 * t1.val) (64 * (2 * k.val) + 47)) := by
      refine (rv_extract d L g2 (k1_off8 k ⟨2, by decide⟩) (k1_off8_inb k ⟨2, by decide⟩) (by decide) 15 (by decide) (by decide) (by decide)).trans ?_
      exact rv_word d L fl (wL L).val (2 * t1.val) 0 (2 * k.val) 47 (by decide) (by omega) (by decide) g2 hV0 _
        (by rw [k1_off8_eq k ⟨2, by decide⟩]; show 128 * k.val + 16 * 2 + 15 = 1024 * 0 + 64 * (2 * k.val) + 47; omega) _
    have hwA_48 : pair0_last.sl.v1456 d L k g2 = Spec.tcol (blkWord fl (wL L).val (2 * t1.val) (64 * (2 * k.val) + 48)) := by
      refine (rv_extract d L g2 (k1_off25 k) (k1_off25_inb k) (by decide) 0 (by decide) (by decide) (by decide)).trans ?_
      exact rv_word d L fl (wL L).val (2 * t1.val) 0 (2 * k.val) 48 (by decide) (by omega) (by decide) g2 hV0 _
        (by rw [k1_off25_eq k]; show 128 * k.val + 48 + 0 = 1024 * 0 + 64 * (2 * k.val) + 48; omega) _
    have hwA_49 : pair0_last.sl.v1490 d L k g2 = Spec.tcol (blkWord fl (wL L).val (2 * t1.val) (64 * (2 * k.val) + 49)) := by
      refine (rv_extract d L g2 (k1_off25 k) (k1_off25_inb k) (by decide) 1 (by decide) (by decide) (by decide)).trans ?_
      exact rv_word d L fl (wL L).val (2 * t1.val) 0 (2 * k.val) 49 (by decide) (by omega) (by decide) g2 hV0 _
        (by rw [k1_off25_eq k]; show 128 * k.val + 48 + 1 = 1024 * 0 + 64 * (2 * k.val) + 49; omega) _
    have sA0_0 : addf (AccMath.accVec (rowF fl tab (wL L).val (2 * t1.val) (2 * k.val)) (offF fl (wL L).val (2 * t1.val) (2 * k.val)) 0 0) (shapeCast S16 (pair0_last.sl.v1673 d L tab k r g1 g2 hR hin) hc16) = AccMath.accVec (rowF fl tab (wL L).val (2 * t1.val) (2 * k.val)) (offF fl (wL L).val (2 * t1.val) (2 * k.val)) 0 1 :=
      acc_step d L fl tab (wL L).val (2 * t1.val) (2 * k.val) 0 _ (hRA _) ⟨0, by decide⟩ ⟨0, by decide⟩ _ rfl _ hwA_0 _ (k1_off9_form ⟨0, by decide⟩ _ _) _ hc16
    have sA0_1 : addf (AccMath.accVec (rowF fl tab (wL L).val (2 * t1.val) (2 * k.val)) (offF fl (wL L).val (2 * t1.val) (2 * k.val)) 0 1) (shapeCast S16 (pair0_last.sl.v1709 d L tab k r g1 g2 hR hin) hc16) = AccMath.accVec (rowF fl tab (wL L).val (2 * t1.val) (2 * k.val)) (offF fl (wL L).val (2 * t1.val) (2 * k.val)) 0 2 :=
      acc_step d L fl tab (wL L).val (2 * t1.val) (2 * k.val) 0 _ (hRA _) ⟨1, by decide⟩ ⟨0, by decide⟩ _ rfl _ hwA_1 _ (k1_off10_form ⟨0, by decide⟩ _ _) _ hc16
    have sA0_2 : addf (AccMath.accVec (rowF fl tab (wL L).val (2 * t1.val) (2 * k.val)) (offF fl (wL L).val (2 * t1.val) (2 * k.val)) 0 2) (shapeCast S16 (pair0_last.sl.v1745 d L tab k r g1 g2 hR hin) hc16) = AccMath.accVec (rowF fl tab (wL L).val (2 * t1.val) (2 * k.val)) (offF fl (wL L).val (2 * t1.val) (2 * k.val)) 0 3 :=
      acc_step d L fl tab (wL L).val (2 * t1.val) (2 * k.val) 0 _ (hRA _) ⟨2, by decide⟩ ⟨0, by decide⟩ _ rfl _ hwA_2 _ (k1_off11_form ⟨0, by decide⟩ _ _) _ hc16
    have sA0_3 : addf (AccMath.accVec (rowF fl tab (wL L).val (2 * t1.val) (2 * k.val)) (offF fl (wL L).val (2 * t1.val) (2 * k.val)) 0 3) (shapeCast S16 (pair0_last.sl.v1781 d L tab k r g1 g2 hR hin) hc16) = AccMath.accVec (rowF fl tab (wL L).val (2 * t1.val) (2 * k.val)) (offF fl (wL L).val (2 * t1.val) (2 * k.val)) 0 4 :=
      acc_step d L fl tab (wL L).val (2 * t1.val) (2 * k.val) 0 _ (hRA _) ⟨3, by decide⟩ ⟨0, by decide⟩ _ rfl _ hwA_3 _ (k1_off12_form ⟨0, by decide⟩ _ _) _ hc16
    have sA0_4 : addf (AccMath.accVec (rowF fl tab (wL L).val (2 * t1.val) (2 * k.val)) (offF fl (wL L).val (2 * t1.val) (2 * k.val)) 0 4) (shapeCast S16 (pair0_last.sl.v1817 d L tab k r g1 g2 hR hin) hc16) = AccMath.accVec (rowF fl tab (wL L).val (2 * t1.val) (2 * k.val)) (offF fl (wL L).val (2 * t1.val) (2 * k.val)) 0 5 :=
      acc_step d L fl tab (wL L).val (2 * t1.val) (2 * k.val) 0 _ (hRA _) ⟨4, by decide⟩ ⟨0, by decide⟩ _ rfl _ hwA_4 _ (k1_off13_form ⟨0, by decide⟩ _ _) _ hc16
    have sA0_5 : addf (AccMath.accVec (rowF fl tab (wL L).val (2 * t1.val) (2 * k.val)) (offF fl (wL L).val (2 * t1.val) (2 * k.val)) 0 5) (shapeCast S16 (pair0_last.sl.v1853 d L tab k r g1 g2 hR hin) hc16) = AccMath.accVec (rowF fl tab (wL L).val (2 * t1.val) (2 * k.val)) (offF fl (wL L).val (2 * t1.val) (2 * k.val)) 0 6 :=
      acc_step d L fl tab (wL L).val (2 * t1.val) (2 * k.val) 0 _ (hRA _) ⟨5, by decide⟩ ⟨0, by decide⟩ _ rfl _ hwA_5 _ (k1_off14_form ⟨0, by decide⟩ _ _) _ hc16
    have sA0_6 : addf (AccMath.accVec (rowF fl tab (wL L).val (2 * t1.val) (2 * k.val)) (offF fl (wL L).val (2 * t1.val) (2 * k.val)) 0 6) (shapeCast S16 (pair0_last.sl.v1889 d L tab k r g1 g2 hR hin) hc16) = AccMath.accVec (rowF fl tab (wL L).val (2 * t1.val) (2 * k.val)) (offF fl (wL L).val (2 * t1.val) (2 * k.val)) 0 7 :=
      acc_step d L fl tab (wL L).val (2 * t1.val) (2 * k.val) 0 _ (hRA _) ⟨6, by decide⟩ ⟨0, by decide⟩ _ rfl _ hwA_6 _ (k1_off15_form ⟨0, by decide⟩ _ _) _ hc16
    have sA0_7 : addf (AccMath.accVec (rowF fl tab (wL L).val (2 * t1.val) (2 * k.val)) (offF fl (wL L).val (2 * t1.val) (2 * k.val)) 0 7) (shapeCast S16 (pair0_last.sl.v1925 d L tab k r g1 g2 hR hin) hc16) = AccMath.accVec (rowF fl tab (wL L).val (2 * t1.val) (2 * k.val)) (offF fl (wL L).val (2 * t1.val) (2 * k.val)) 0 8 :=
      acc_step d L fl tab (wL L).val (2 * t1.val) (2 * k.val) 0 _ (hRA _) ⟨7, by decide⟩ ⟨0, by decide⟩ _ rfl _ hwA_7 _ (k1_off16_form ⟨0, by decide⟩ _ _) _ hc16
    have sA0_8 : addf (AccMath.accVec (rowF fl tab (wL L).val (2 * t1.val) (2 * k.val)) (offF fl (wL L).val (2 * t1.val) (2 * k.val)) 0 8) (shapeCast S16 (pair0_last.sl.v1961 d L tab k r g1 g2 hR hin) hc16) = AccMath.accVec (rowF fl tab (wL L).val (2 * t1.val) (2 * k.val)) (offF fl (wL L).val (2 * t1.val) (2 * k.val)) 0 9 :=
      acc_step d L fl tab (wL L).val (2 * t1.val) (2 * k.val) 0 _ (hRA _) ⟨8, by decide⟩ ⟨0, by decide⟩ _ rfl _ hwA_8 _ (k1_off17_form ⟨0, by decide⟩ _ _) _ hc16
    have sA0_9 : addf (AccMath.accVec (rowF fl tab (wL L).val (2 * t1.val) (2 * k.val)) (offF fl (wL L).val (2 * t1.val) (2 * k.val)) 0 9) (shapeCast S16 (pair0_last.sl.v1997 d L tab k r g1 g2 hR hin) hc16) = AccMath.accVec (rowF fl tab (wL L).val (2 * t1.val) (2 * k.val)) (offF fl (wL L).val (2 * t1.val) (2 * k.val)) 0 10 :=
      acc_step d L fl tab (wL L).val (2 * t1.val) (2 * k.val) 0 _ (hRA _) ⟨9, by decide⟩ ⟨0, by decide⟩ _ rfl _ hwA_9 _ (k1_off18_form ⟨0, by decide⟩ _ _) _ hc16
    have sA0_10 : addf (AccMath.accVec (rowF fl tab (wL L).val (2 * t1.val) (2 * k.val)) (offF fl (wL L).val (2 * t1.val) (2 * k.val)) 0 10) (shapeCast S16 (pair0_last.sl.v2033 d L tab k r g1 g2 hR hin) hc16) = AccMath.accVec (rowF fl tab (wL L).val (2 * t1.val) (2 * k.val)) (offF fl (wL L).val (2 * t1.val) (2 * k.val)) 0 11 :=
      acc_step d L fl tab (wL L).val (2 * t1.val) (2 * k.val) 0 _ (hRA _) ⟨10, by decide⟩ ⟨0, by decide⟩ _ rfl _ hwA_10 _ (k1_off19_form ⟨0, by decide⟩ _ _) _ hc16
    have sA0_11 : addf (AccMath.accVec (rowF fl tab (wL L).val (2 * t1.val) (2 * k.val)) (offF fl (wL L).val (2 * t1.val) (2 * k.val)) 0 11) (shapeCast S16 (pair0_last.sl.v2069 d L tab k r g1 g2 hR hin) hc16) = AccMath.accVec (rowF fl tab (wL L).val (2 * t1.val) (2 * k.val)) (offF fl (wL L).val (2 * t1.val) (2 * k.val)) 0 12 :=
      acc_step d L fl tab (wL L).val (2 * t1.val) (2 * k.val) 0 _ (hRA _) ⟨11, by decide⟩ ⟨0, by decide⟩ _ rfl _ hwA_11 _ (k1_off20_form ⟨0, by decide⟩ _ _) _ hc16
    have sA0_12 : addf (AccMath.accVec (rowF fl tab (wL L).val (2 * t1.val) (2 * k.val)) (offF fl (wL L).val (2 * t1.val) (2 * k.val)) 0 12) (shapeCast S16 (pair0_last.sl.v2105 d L tab k r g1 g2 hR hin) hc16) = AccMath.accVec (rowF fl tab (wL L).val (2 * t1.val) (2 * k.val)) (offF fl (wL L).val (2 * t1.val) (2 * k.val)) 0 13 :=
      acc_step d L fl tab (wL L).val (2 * t1.val) (2 * k.val) 0 _ (hRA _) ⟨12, by decide⟩ ⟨0, by decide⟩ _ rfl _ hwA_12 _ (k1_off21_form ⟨0, by decide⟩ _ _) _ hc16
    have sA0_13 : addf (AccMath.accVec (rowF fl tab (wL L).val (2 * t1.val) (2 * k.val)) (offF fl (wL L).val (2 * t1.val) (2 * k.val)) 0 13) (shapeCast S16 (pair0_last.sl.v2141 d L tab k r g1 g2 hR hin) hc16) = AccMath.accVec (rowF fl tab (wL L).val (2 * t1.val) (2 * k.val)) (offF fl (wL L).val (2 * t1.val) (2 * k.val)) 0 14 :=
      acc_step d L fl tab (wL L).val (2 * t1.val) (2 * k.val) 0 _ (hRA _) ⟨13, by decide⟩ ⟨0, by decide⟩ _ rfl _ hwA_13 _ (k1_off22_form ⟨0, by decide⟩ _ _) _ hc16
    have sA0_14 : addf (AccMath.accVec (rowF fl tab (wL L).val (2 * t1.val) (2 * k.val)) (offF fl (wL L).val (2 * t1.val) (2 * k.val)) 0 14) (shapeCast S16 (pair0_last.sl.v2177 d L tab k r g1 g2 hR hin) hc16) = AccMath.accVec (rowF fl tab (wL L).val (2 * t1.val) (2 * k.val)) (offF fl (wL L).val (2 * t1.val) (2 * k.val)) 0 15 :=
      acc_step d L fl tab (wL L).val (2 * t1.val) (2 * k.val) 0 _ (hRA _) ⟨14, by decide⟩ ⟨0, by decide⟩ _ rfl _ hwA_14 _ (k1_off23_form ⟨0, by decide⟩ _ _) _ hc16
    have sA0_15 : addf (AccMath.accVec (rowF fl tab (wL L).val (2 * t1.val) (2 * k.val)) (offF fl (wL L).val (2 * t1.val) (2 * k.val)) 0 15) (shapeCast S16 (pair0_last.sl.v2213 d L tab k r g1 g2 hR hin) hc16) = AccMath.accVec (rowF fl tab (wL L).val (2 * t1.val) (2 * k.val)) (offF fl (wL L).val (2 * t1.val) (2 * k.val)) 0 16 :=
      acc_step d L fl tab (wL L).val (2 * t1.val) (2 * k.val) 0 _ (hRA _) ⟨15, by decide⟩ ⟨0, by decide⟩ _ rfl _ hwA_15 _ (k1_off24_form ⟨0, by decide⟩ _ _) _ hc16
    have sA0_16 : addf (AccMath.accVec (rowF fl tab (wL L).val (2 * t1.val) (2 * k.val)) (offF fl (wL L).val (2 * t1.val) (2 * k.val)) 0 16) (shapeCast S16 (pair0_last.sl.v1673_1 d L tab k r g1 g2 hR hin) hc16) = AccMath.accVec (rowF fl tab (wL L).val (2 * t1.val) (2 * k.val)) (offF fl (wL L).val (2 * t1.val) (2 * k.val)) 0 17 :=
      acc_step d L fl tab (wL L).val (2 * t1.val) (2 * k.val) 0 _ (hRA _) ⟨16, by decide⟩ ⟨0, by decide⟩ _ rfl _ hwA_16 _ (k1_off9_form ⟨1, by decide⟩ _ _) _ hc16
    have sA0_17 : addf (AccMath.accVec (rowF fl tab (wL L).val (2 * t1.val) (2 * k.val)) (offF fl (wL L).val (2 * t1.val) (2 * k.val)) 0 17) (shapeCast S16 (pair0_last.sl.v1709_1 d L tab k r g1 g2 hR hin) hc16) = AccMath.accVec (rowF fl tab (wL L).val (2 * t1.val) (2 * k.val)) (offF fl (wL L).val (2 * t1.val) (2 * k.val)) 0 18 :=
      acc_step d L fl tab (wL L).val (2 * t1.val) (2 * k.val) 0 _ (hRA _) ⟨17, by decide⟩ ⟨0, by decide⟩ _ rfl _ hwA_17 _ (k1_off10_form ⟨1, by decide⟩ _ _) _ hc16
    have sA0_18 : addf (AccMath.accVec (rowF fl tab (wL L).val (2 * t1.val) (2 * k.val)) (offF fl (wL L).val (2 * t1.val) (2 * k.val)) 0 18) (shapeCast S16 (pair0_last.sl.v1745_1 d L tab k r g1 g2 hR hin) hc16) = AccMath.accVec (rowF fl tab (wL L).val (2 * t1.val) (2 * k.val)) (offF fl (wL L).val (2 * t1.val) (2 * k.val)) 0 19 :=
      acc_step d L fl tab (wL L).val (2 * t1.val) (2 * k.val) 0 _ (hRA _) ⟨18, by decide⟩ ⟨0, by decide⟩ _ rfl _ hwA_18 _ (k1_off11_form ⟨1, by decide⟩ _ _) _ hc16
    have sA0_19 : addf (AccMath.accVec (rowF fl tab (wL L).val (2 * t1.val) (2 * k.val)) (offF fl (wL L).val (2 * t1.val) (2 * k.val)) 0 19) (shapeCast S16 (pair0_last.sl.v1781_1 d L tab k r g1 g2 hR hin) hc16) = AccMath.accVec (rowF fl tab (wL L).val (2 * t1.val) (2 * k.val)) (offF fl (wL L).val (2 * t1.val) (2 * k.val)) 0 20 :=
      acc_step d L fl tab (wL L).val (2 * t1.val) (2 * k.val) 0 _ (hRA _) ⟨19, by decide⟩ ⟨0, by decide⟩ _ rfl _ hwA_19 _ (k1_off12_form ⟨1, by decide⟩ _ _) _ hc16
    have sA0_20 : addf (AccMath.accVec (rowF fl tab (wL L).val (2 * t1.val) (2 * k.val)) (offF fl (wL L).val (2 * t1.val) (2 * k.val)) 0 20) (shapeCast S16 (pair0_last.sl.v1817_1 d L tab k r g1 g2 hR hin) hc16) = AccMath.accVec (rowF fl tab (wL L).val (2 * t1.val) (2 * k.val)) (offF fl (wL L).val (2 * t1.val) (2 * k.val)) 0 21 :=
      acc_step d L fl tab (wL L).val (2 * t1.val) (2 * k.val) 0 _ (hRA _) ⟨20, by decide⟩ ⟨0, by decide⟩ _ rfl _ hwA_20 _ (k1_off13_form ⟨1, by decide⟩ _ _) _ hc16
    have sA0_21 : addf (AccMath.accVec (rowF fl tab (wL L).val (2 * t1.val) (2 * k.val)) (offF fl (wL L).val (2 * t1.val) (2 * k.val)) 0 21) (shapeCast S16 (pair0_last.sl.v1853_1 d L tab k r g1 g2 hR hin) hc16) = AccMath.accVec (rowF fl tab (wL L).val (2 * t1.val) (2 * k.val)) (offF fl (wL L).val (2 * t1.val) (2 * k.val)) 0 22 :=
      acc_step d L fl tab (wL L).val (2 * t1.val) (2 * k.val) 0 _ (hRA _) ⟨21, by decide⟩ ⟨0, by decide⟩ _ rfl _ hwA_21 _ (k1_off14_form ⟨1, by decide⟩ _ _) _ hc16
    have sA0_22 : addf (AccMath.accVec (rowF fl tab (wL L).val (2 * t1.val) (2 * k.val)) (offF fl (wL L).val (2 * t1.val) (2 * k.val)) 0 22) (shapeCast S16 (pair0_last.sl.v1889_1 d L tab k r g1 g2 hR hin) hc16) = AccMath.accVec (rowF fl tab (wL L).val (2 * t1.val) (2 * k.val)) (offF fl (wL L).val (2 * t1.val) (2 * k.val)) 0 23 :=
      acc_step d L fl tab (wL L).val (2 * t1.val) (2 * k.val) 0 _ (hRA _) ⟨22, by decide⟩ ⟨0, by decide⟩ _ rfl _ hwA_22 _ (k1_off15_form ⟨1, by decide⟩ _ _) _ hc16
    have sA0_23 : addf (AccMath.accVec (rowF fl tab (wL L).val (2 * t1.val) (2 * k.val)) (offF fl (wL L).val (2 * t1.val) (2 * k.val)) 0 23) (shapeCast S16 (pair0_last.sl.v1925_1 d L tab k r g1 g2 hR hin) hc16) = AccMath.accVec (rowF fl tab (wL L).val (2 * t1.val) (2 * k.val)) (offF fl (wL L).val (2 * t1.val) (2 * k.val)) 0 24 :=
      acc_step d L fl tab (wL L).val (2 * t1.val) (2 * k.val) 0 _ (hRA _) ⟨23, by decide⟩ ⟨0, by decide⟩ _ rfl _ hwA_23 _ (k1_off16_form ⟨1, by decide⟩ _ _) _ hc16
    have sA0_24 : addf (AccMath.accVec (rowF fl tab (wL L).val (2 * t1.val) (2 * k.val)) (offF fl (wL L).val (2 * t1.val) (2 * k.val)) 0 24) (shapeCast S16 (pair0_last.sl.v1961_1 d L tab k r g1 g2 hR hin) hc16) = AccMath.accVec (rowF fl tab (wL L).val (2 * t1.val) (2 * k.val)) (offF fl (wL L).val (2 * t1.val) (2 * k.val)) 0 25 :=
      acc_step d L fl tab (wL L).val (2 * t1.val) (2 * k.val) 0 _ (hRA _) ⟨24, by decide⟩ ⟨0, by decide⟩ _ rfl _ hwA_24 _ (k1_off17_form ⟨1, by decide⟩ _ _) _ hc16
    have sA0_25 : addf (AccMath.accVec (rowF fl tab (wL L).val (2 * t1.val) (2 * k.val)) (offF fl (wL L).val (2 * t1.val) (2 * k.val)) 0 25) (shapeCast S16 (pair0_last.sl.v1997_1 d L tab k r g1 g2 hR hin) hc16) = AccMath.accVec (rowF fl tab (wL L).val (2 * t1.val) (2 * k.val)) (offF fl (wL L).val (2 * t1.val) (2 * k.val)) 0 26 :=
      acc_step d L fl tab (wL L).val (2 * t1.val) (2 * k.val) 0 _ (hRA _) ⟨25, by decide⟩ ⟨0, by decide⟩ _ rfl _ hwA_25 _ (k1_off18_form ⟨1, by decide⟩ _ _) _ hc16
    have sA0_26 : addf (AccMath.accVec (rowF fl tab (wL L).val (2 * t1.val) (2 * k.val)) (offF fl (wL L).val (2 * t1.val) (2 * k.val)) 0 26) (shapeCast S16 (pair0_last.sl.v2033_1 d L tab k r g1 g2 hR hin) hc16) = AccMath.accVec (rowF fl tab (wL L).val (2 * t1.val) (2 * k.val)) (offF fl (wL L).val (2 * t1.val) (2 * k.val)) 0 27 :=
      acc_step d L fl tab (wL L).val (2 * t1.val) (2 * k.val) 0 _ (hRA _) ⟨26, by decide⟩ ⟨0, by decide⟩ _ rfl _ hwA_26 _ (k1_off19_form ⟨1, by decide⟩ _ _) _ hc16
    have sA0_27 : addf (AccMath.accVec (rowF fl tab (wL L).val (2 * t1.val) (2 * k.val)) (offF fl (wL L).val (2 * t1.val) (2 * k.val)) 0 27) (shapeCast S16 (pair0_last.sl.v2069_1 d L tab k r g1 g2 hR hin) hc16) = AccMath.accVec (rowF fl tab (wL L).val (2 * t1.val) (2 * k.val)) (offF fl (wL L).val (2 * t1.val) (2 * k.val)) 0 28 :=
      acc_step d L fl tab (wL L).val (2 * t1.val) (2 * k.val) 0 _ (hRA _) ⟨27, by decide⟩ ⟨0, by decide⟩ _ rfl _ hwA_27 _ (k1_off20_form ⟨1, by decide⟩ _ _) _ hc16
    have sA0_28 : addf (AccMath.accVec (rowF fl tab (wL L).val (2 * t1.val) (2 * k.val)) (offF fl (wL L).val (2 * t1.val) (2 * k.val)) 0 28) (shapeCast S16 (pair0_last.sl.v2105_1 d L tab k r g1 g2 hR hin) hc16) = AccMath.accVec (rowF fl tab (wL L).val (2 * t1.val) (2 * k.val)) (offF fl (wL L).val (2 * t1.val) (2 * k.val)) 0 29 :=
      acc_step d L fl tab (wL L).val (2 * t1.val) (2 * k.val) 0 _ (hRA _) ⟨28, by decide⟩ ⟨0, by decide⟩ _ rfl _ hwA_28 _ (k1_off21_form ⟨1, by decide⟩ _ _) _ hc16
    have sA0_29 : addf (AccMath.accVec (rowF fl tab (wL L).val (2 * t1.val) (2 * k.val)) (offF fl (wL L).val (2 * t1.val) (2 * k.val)) 0 29) (shapeCast S16 (pair0_last.sl.v2141_1 d L tab k r g1 g2 hR hin) hc16) = AccMath.accVec (rowF fl tab (wL L).val (2 * t1.val) (2 * k.val)) (offF fl (wL L).val (2 * t1.val) (2 * k.val)) 0 30 :=
      acc_step d L fl tab (wL L).val (2 * t1.val) (2 * k.val) 0 _ (hRA _) ⟨29, by decide⟩ ⟨0, by decide⟩ _ rfl _ hwA_29 _ (k1_off22_form ⟨1, by decide⟩ _ _) _ hc16
    have sA0_30 : addf (AccMath.accVec (rowF fl tab (wL L).val (2 * t1.val) (2 * k.val)) (offF fl (wL L).val (2 * t1.val) (2 * k.val)) 0 30) (shapeCast S16 (pair0_last.sl.v2177_1 d L tab k r g1 g2 hR hin) hc16) = AccMath.accVec (rowF fl tab (wL L).val (2 * t1.val) (2 * k.val)) (offF fl (wL L).val (2 * t1.val) (2 * k.val)) 0 31 :=
      acc_step d L fl tab (wL L).val (2 * t1.val) (2 * k.val) 0 _ (hRA _) ⟨30, by decide⟩ ⟨0, by decide⟩ _ rfl _ hwA_30 _ (k1_off23_form ⟨1, by decide⟩ _ _) _ hc16
    have sA0_31 : addf (AccMath.accVec (rowF fl tab (wL L).val (2 * t1.val) (2 * k.val)) (offF fl (wL L).val (2 * t1.val) (2 * k.val)) 0 31) (shapeCast S16 (pair0_last.sl.v2213_1 d L tab k r g1 g2 hR hin) hc16) = AccMath.accVec (rowF fl tab (wL L).val (2 * t1.val) (2 * k.val)) (offF fl (wL L).val (2 * t1.val) (2 * k.val)) 0 32 :=
      acc_step d L fl tab (wL L).val (2 * t1.val) (2 * k.val) 0 _ (hRA _) ⟨31, by decide⟩ ⟨0, by decide⟩ _ rfl _ hwA_31 _ (k1_off24_form ⟨1, by decide⟩ _ _) _ hc16
    have sA0_32 : addf (AccMath.accVec (rowF fl tab (wL L).val (2 * t1.val) (2 * k.val)) (offF fl (wL L).val (2 * t1.val) (2 * k.val)) 0 32) (shapeCast S16 (pair0_last.sl.v1673_2 d L tab k r g1 g2 hR hin) hc16) = AccMath.accVec (rowF fl tab (wL L).val (2 * t1.val) (2 * k.val)) (offF fl (wL L).val (2 * t1.val) (2 * k.val)) 0 33 :=
      acc_step d L fl tab (wL L).val (2 * t1.val) (2 * k.val) 0 _ (hRA _) ⟨32, by decide⟩ ⟨0, by decide⟩ _ rfl _ hwA_32 _ (k1_off9_form ⟨2, by decide⟩ _ _) _ hc16
    have sA0_33 : addf (AccMath.accVec (rowF fl tab (wL L).val (2 * t1.val) (2 * k.val)) (offF fl (wL L).val (2 * t1.val) (2 * k.val)) 0 33) (shapeCast S16 (pair0_last.sl.v1709_2 d L tab k r g1 g2 hR hin) hc16) = AccMath.accVec (rowF fl tab (wL L).val (2 * t1.val) (2 * k.val)) (offF fl (wL L).val (2 * t1.val) (2 * k.val)) 0 34 :=
      acc_step d L fl tab (wL L).val (2 * t1.val) (2 * k.val) 0 _ (hRA _) ⟨33, by decide⟩ ⟨0, by decide⟩ _ rfl _ hwA_33 _ (k1_off10_form ⟨2, by decide⟩ _ _) _ hc16
    have sA0_34 : addf (AccMath.accVec (rowF fl tab (wL L).val (2 * t1.val) (2 * k.val)) (offF fl (wL L).val (2 * t1.val) (2 * k.val)) 0 34) (shapeCast S16 (pair0_last.sl.v1745_2 d L tab k r g1 g2 hR hin) hc16) = AccMath.accVec (rowF fl tab (wL L).val (2 * t1.val) (2 * k.val)) (offF fl (wL L).val (2 * t1.val) (2 * k.val)) 0 35 :=
      acc_step d L fl tab (wL L).val (2 * t1.val) (2 * k.val) 0 _ (hRA _) ⟨34, by decide⟩ ⟨0, by decide⟩ _ rfl _ hwA_34 _ (k1_off11_form ⟨2, by decide⟩ _ _) _ hc16
    have sA0_35 : addf (AccMath.accVec (rowF fl tab (wL L).val (2 * t1.val) (2 * k.val)) (offF fl (wL L).val (2 * t1.val) (2 * k.val)) 0 35) (shapeCast S16 (pair0_last.sl.v1781_2 d L tab k r g1 g2 hR hin) hc16) = AccMath.accVec (rowF fl tab (wL L).val (2 * t1.val) (2 * k.val)) (offF fl (wL L).val (2 * t1.val) (2 * k.val)) 0 36 :=
      acc_step d L fl tab (wL L).val (2 * t1.val) (2 * k.val) 0 _ (hRA _) ⟨35, by decide⟩ ⟨0, by decide⟩ _ rfl _ hwA_35 _ (k1_off12_form ⟨2, by decide⟩ _ _) _ hc16
    have sA0_36 : addf (AccMath.accVec (rowF fl tab (wL L).val (2 * t1.val) (2 * k.val)) (offF fl (wL L).val (2 * t1.val) (2 * k.val)) 0 36) (shapeCast S16 (pair0_last.sl.v1817_2 d L tab k r g1 g2 hR hin) hc16) = AccMath.accVec (rowF fl tab (wL L).val (2 * t1.val) (2 * k.val)) (offF fl (wL L).val (2 * t1.val) (2 * k.val)) 0 37 :=
      acc_step d L fl tab (wL L).val (2 * t1.val) (2 * k.val) 0 _ (hRA _) ⟨36, by decide⟩ ⟨0, by decide⟩ _ rfl _ hwA_36 _ (k1_off13_form ⟨2, by decide⟩ _ _) _ hc16
    have sA0_37 : addf (AccMath.accVec (rowF fl tab (wL L).val (2 * t1.val) (2 * k.val)) (offF fl (wL L).val (2 * t1.val) (2 * k.val)) 0 37) (shapeCast S16 (pair0_last.sl.v1853_2 d L tab k r g1 g2 hR hin) hc16) = AccMath.accVec (rowF fl tab (wL L).val (2 * t1.val) (2 * k.val)) (offF fl (wL L).val (2 * t1.val) (2 * k.val)) 0 38 :=
      acc_step d L fl tab (wL L).val (2 * t1.val) (2 * k.val) 0 _ (hRA _) ⟨37, by decide⟩ ⟨0, by decide⟩ _ rfl _ hwA_37 _ (k1_off14_form ⟨2, by decide⟩ _ _) _ hc16
    have sA0_38 : addf (AccMath.accVec (rowF fl tab (wL L).val (2 * t1.val) (2 * k.val)) (offF fl (wL L).val (2 * t1.val) (2 * k.val)) 0 38) (shapeCast S16 (pair0_last.sl.v1889_2 d L tab k r g1 g2 hR hin) hc16) = AccMath.accVec (rowF fl tab (wL L).val (2 * t1.val) (2 * k.val)) (offF fl (wL L).val (2 * t1.val) (2 * k.val)) 0 39 :=
      acc_step d L fl tab (wL L).val (2 * t1.val) (2 * k.val) 0 _ (hRA _) ⟨38, by decide⟩ ⟨0, by decide⟩ _ rfl _ hwA_38 _ (k1_off15_form ⟨2, by decide⟩ _ _) _ hc16
    have sA0_39 : addf (AccMath.accVec (rowF fl tab (wL L).val (2 * t1.val) (2 * k.val)) (offF fl (wL L).val (2 * t1.val) (2 * k.val)) 0 39) (shapeCast S16 (pair0_last.sl.v1925_2 d L tab k r g1 g2 hR hin) hc16) = AccMath.accVec (rowF fl tab (wL L).val (2 * t1.val) (2 * k.val)) (offF fl (wL L).val (2 * t1.val) (2 * k.val)) 0 40 :=
      acc_step d L fl tab (wL L).val (2 * t1.val) (2 * k.val) 0 _ (hRA _) ⟨39, by decide⟩ ⟨0, by decide⟩ _ rfl _ hwA_39 _ (k1_off16_form ⟨2, by decide⟩ _ _) _ hc16
    have sA0_40 : addf (AccMath.accVec (rowF fl tab (wL L).val (2 * t1.val) (2 * k.val)) (offF fl (wL L).val (2 * t1.val) (2 * k.val)) 0 40) (shapeCast S16 (pair0_last.sl.v1961_2 d L tab k r g1 g2 hR hin) hc16) = AccMath.accVec (rowF fl tab (wL L).val (2 * t1.val) (2 * k.val)) (offF fl (wL L).val (2 * t1.val) (2 * k.val)) 0 41 :=
      acc_step d L fl tab (wL L).val (2 * t1.val) (2 * k.val) 0 _ (hRA _) ⟨40, by decide⟩ ⟨0, by decide⟩ _ rfl _ hwA_40 _ (k1_off17_form ⟨2, by decide⟩ _ _) _ hc16
    have sA0_41 : addf (AccMath.accVec (rowF fl tab (wL L).val (2 * t1.val) (2 * k.val)) (offF fl (wL L).val (2 * t1.val) (2 * k.val)) 0 41) (shapeCast S16 (pair0_last.sl.v1997_2 d L tab k r g1 g2 hR hin) hc16) = AccMath.accVec (rowF fl tab (wL L).val (2 * t1.val) (2 * k.val)) (offF fl (wL L).val (2 * t1.val) (2 * k.val)) 0 42 :=
      acc_step d L fl tab (wL L).val (2 * t1.val) (2 * k.val) 0 _ (hRA _) ⟨41, by decide⟩ ⟨0, by decide⟩ _ rfl _ hwA_41 _ (k1_off18_form ⟨2, by decide⟩ _ _) _ hc16
    have sA0_42 : addf (AccMath.accVec (rowF fl tab (wL L).val (2 * t1.val) (2 * k.val)) (offF fl (wL L).val (2 * t1.val) (2 * k.val)) 0 42) (shapeCast S16 (pair0_last.sl.v2033_2 d L tab k r g1 g2 hR hin) hc16) = AccMath.accVec (rowF fl tab (wL L).val (2 * t1.val) (2 * k.val)) (offF fl (wL L).val (2 * t1.val) (2 * k.val)) 0 43 :=
      acc_step d L fl tab (wL L).val (2 * t1.val) (2 * k.val) 0 _ (hRA _) ⟨42, by decide⟩ ⟨0, by decide⟩ _ rfl _ hwA_42 _ (k1_off19_form ⟨2, by decide⟩ _ _) _ hc16
    have sA0_43 : addf (AccMath.accVec (rowF fl tab (wL L).val (2 * t1.val) (2 * k.val)) (offF fl (wL L).val (2 * t1.val) (2 * k.val)) 0 43) (shapeCast S16 (pair0_last.sl.v2069_2 d L tab k r g1 g2 hR hin) hc16) = AccMath.accVec (rowF fl tab (wL L).val (2 * t1.val) (2 * k.val)) (offF fl (wL L).val (2 * t1.val) (2 * k.val)) 0 44 :=
      acc_step d L fl tab (wL L).val (2 * t1.val) (2 * k.val) 0 _ (hRA _) ⟨43, by decide⟩ ⟨0, by decide⟩ _ rfl _ hwA_43 _ (k1_off20_form ⟨2, by decide⟩ _ _) _ hc16
    have sA0_44 : addf (AccMath.accVec (rowF fl tab (wL L).val (2 * t1.val) (2 * k.val)) (offF fl (wL L).val (2 * t1.val) (2 * k.val)) 0 44) (shapeCast S16 (pair0_last.sl.v2105_2 d L tab k r g1 g2 hR hin) hc16) = AccMath.accVec (rowF fl tab (wL L).val (2 * t1.val) (2 * k.val)) (offF fl (wL L).val (2 * t1.val) (2 * k.val)) 0 45 :=
      acc_step d L fl tab (wL L).val (2 * t1.val) (2 * k.val) 0 _ (hRA _) ⟨44, by decide⟩ ⟨0, by decide⟩ _ rfl _ hwA_44 _ (k1_off21_form ⟨2, by decide⟩ _ _) _ hc16
    have sA0_45 : addf (AccMath.accVec (rowF fl tab (wL L).val (2 * t1.val) (2 * k.val)) (offF fl (wL L).val (2 * t1.val) (2 * k.val)) 0 45) (shapeCast S16 (pair0_last.sl.v2141_2 d L tab k r g1 g2 hR hin) hc16) = AccMath.accVec (rowF fl tab (wL L).val (2 * t1.val) (2 * k.val)) (offF fl (wL L).val (2 * t1.val) (2 * k.val)) 0 46 :=
      acc_step d L fl tab (wL L).val (2 * t1.val) (2 * k.val) 0 _ (hRA _) ⟨45, by decide⟩ ⟨0, by decide⟩ _ rfl _ hwA_45 _ (k1_off22_form ⟨2, by decide⟩ _ _) _ hc16
    have sA0_46 : addf (AccMath.accVec (rowF fl tab (wL L).val (2 * t1.val) (2 * k.val)) (offF fl (wL L).val (2 * t1.val) (2 * k.val)) 0 46) (shapeCast S16 (pair0_last.sl.v2177_2 d L tab k r g1 g2 hR hin) hc16) = AccMath.accVec (rowF fl tab (wL L).val (2 * t1.val) (2 * k.val)) (offF fl (wL L).val (2 * t1.val) (2 * k.val)) 0 47 :=
      acc_step d L fl tab (wL L).val (2 * t1.val) (2 * k.val) 0 _ (hRA _) ⟨46, by decide⟩ ⟨0, by decide⟩ _ rfl _ hwA_46 _ (k1_off23_form ⟨2, by decide⟩ _ _) _ hc16
    have sA0_47 : addf (AccMath.accVec (rowF fl tab (wL L).val (2 * t1.val) (2 * k.val)) (offF fl (wL L).val (2 * t1.val) (2 * k.val)) 0 47) (shapeCast S16 (pair0_last.sl.v2213_2 d L tab k r g1 g2 hR hin) hc16) = AccMath.accVec (rowF fl tab (wL L).val (2 * t1.val) (2 * k.val)) (offF fl (wL L).val (2 * t1.val) (2 * k.val)) 0 48 :=
      acc_step d L fl tab (wL L).val (2 * t1.val) (2 * k.val) 0 _ (hRA _) ⟨47, by decide⟩ ⟨0, by decide⟩ _ rfl _ hwA_47 _ (k1_off24_form ⟨2, by decide⟩ _ _) _ hc16
    have sA0_48 : addf (AccMath.accVec (rowF fl tab (wL L).val (2 * t1.val) (2 * k.val)) (offF fl (wL L).val (2 * t1.val) (2 * k.val)) 0 48) (shapeCast S16 (pair0_last.sl.v1462 d L tab k r g1 g2 hR hin) hc16) = AccMath.accVec (rowF fl tab (wL L).val (2 * t1.val) (2 * k.val)) (offF fl (wL L).val (2 * t1.val) (2 * k.val)) 0 49 :=
      acc_step d L fl tab (wL L).val (2 * t1.val) (2 * k.val) 0 _ (hRA _) ⟨48, by decide⟩ ⟨0, by decide⟩ _ rfl _ hwA_48 _ (k1_off26_form _ _) _ hc16
    have sA0_49 : addf (AccMath.accVec (rowF fl tab (wL L).val (2 * t1.val) (2 * k.val)) (offF fl (wL L).val (2 * t1.val) (2 * k.val)) 0 49) (shapeCast S16 (pair0_last.sl.v1496 d L tab k r g1 g2 hR hin) hc16) = AccMath.accVec (rowF fl tab (wL L).val (2 * t1.val) (2 * k.val)) (offF fl (wL L).val (2 * t1.val) (2 * k.val)) 0 50 :=
      acc_step d L fl tab (wL L).val (2 * t1.val) (2 * k.val) 0 _ (hRA _) ⟨49, by decide⟩ ⟨0, by decide⟩ _ rfl _ hwA_49 _ (k1_off27_form _ _) _ hc16
    have hPA0 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val)) (offF fl (wL L).val (2 * t1.val) (2 * k.val)) 0 0) (shapeCast S16 (pair0_last.sl.v1673 d L tab k r g1 g2 hR hin) hc16)) (shapeCast S16 (pair0_last.sl.v1709 d L tab k r g1 g2 hR hin) hc16)) (shapeCast S16 (pair0_last.sl.v1745 d L tab k r g1 g2 hR hin) hc16)) (shapeCast S16 (pair0_last.sl.v1781 d L tab k r g1 g2 hR hin) hc16)) (shapeCast S16 (pair0_last.sl.v1817 d L tab k r g1 g2 hR hin) hc16)) (shapeCast S16 (pair0_last.sl.v1853 d L tab k r g1 g2 hR hin) hc16)) (shapeCast S16 (pair0_last.sl.v1889 d L tab k r g1 g2 hR hin) hc16)) (shapeCast S16 (pair0_last.sl.v1925 d L tab k r g1 g2 hR hin) hc16)) (shapeCast S16 (pair0_last.sl.v1961 d L tab k r g1 g2 hR hin) hc16)) (shapeCast S16 (pair0_last.sl.v1997 d L tab k r g1 g2 hR hin) hc16)) (shapeCast S16 (pair0_last.sl.v2033 d L tab k r g1 g2 hR hin) hc16)) (shapeCast S16 (pair0_last.sl.v2069 d L tab k r g1 g2 hR hin) hc16)) (shapeCast S16 (pair0_last.sl.v2105 d L tab k r g1 g2 hR hin) hc16)) (shapeCast S16 (pair0_last.sl.v2141 d L tab k r g1 g2 hR hin) hc16)) (shapeCast S16 (pair0_last.sl.v2177 d L tab k r g1 g2 hR hin) hc16)) (shapeCast S16 (pair0_last.sl.v2213 d L tab k r g1 g2 hR hin) hc16)) (shapeCast S16 (pair0_last.sl.v1673_1 d L tab k r g1 g2 hR hin) hc16)) (shapeCast S16 (pair0_last.sl.v1709_1 d L tab k r g1 g2 hR hin) hc16)) (shapeCast S16 (pair0_last.sl.v1745_1 d L tab k r g1 g2 hR hin) hc16)) (shapeCast S16 (pair0_last.sl.v1781_1 d L tab k r g1 g2 hR hin) hc16)) (shapeCast S16 (pair0_last.sl.v1817_1 d L tab k r g1 g2 hR hin) hc16)) (shapeCast S16 (pair0_last.sl.v1853_1 d L tab k r g1 g2 hR hin) hc16)) (shapeCast S16 (pair0_last.sl.v1889_1 d L tab k r g1 g2 hR hin) hc16)) (shapeCast S16 (pair0_last.sl.v1925_1 d L tab k r g1 g2 hR hin) hc16)) (shapeCast S16 (pair0_last.sl.v1961_1 d L tab k r g1 g2 hR hin) hc16)) (shapeCast S16 (pair0_last.sl.v1997_1 d L tab k r g1 g2 hR hin) hc16)) (shapeCast S16 (pair0_last.sl.v2033_1 d L tab k r g1 g2 hR hin) hc16)) (shapeCast S16 (pair0_last.sl.v2069_1 d L tab k r g1 g2 hR hin) hc16)) (shapeCast S16 (pair0_last.sl.v2105_1 d L tab k r g1 g2 hR hin) hc16)) (shapeCast S16 (pair0_last.sl.v2141_1 d L tab k r g1 g2 hR hin) hc16)) (shapeCast S16 (pair0_last.sl.v2177_1 d L tab k r g1 g2 hR hin) hc16)) (shapeCast S16 (pair0_last.sl.v2213_1 d L tab k r g1 g2 hR hin) hc16)) (shapeCast S16 (pair0_last.sl.v1673_2 d L tab k r g1 g2 hR hin) hc16)) (shapeCast S16 (pair0_last.sl.v1709_2 d L tab k r g1 g2 hR hin) hc16)) (shapeCast S16 (pair0_last.sl.v1745_2 d L tab k r g1 g2 hR hin) hc16)) (shapeCast S16 (pair0_last.sl.v1781_2 d L tab k r g1 g2 hR hin) hc16)) (shapeCast S16 (pair0_last.sl.v1817_2 d L tab k r g1 g2 hR hin) hc16)) (shapeCast S16 (pair0_last.sl.v1853_2 d L tab k r g1 g2 hR hin) hc16)) (shapeCast S16 (pair0_last.sl.v1889_2 d L tab k r g1 g2 hR hin) hc16)) (shapeCast S16 (pair0_last.sl.v1925_2 d L tab k r g1 g2 hR hin) hc16)) (shapeCast S16 (pair0_last.sl.v1961_2 d L tab k r g1 g2 hR hin) hc16)) (shapeCast S16 (pair0_last.sl.v1997_2 d L tab k r g1 g2 hR hin) hc16)) (shapeCast S16 (pair0_last.sl.v2033_2 d L tab k r g1 g2 hR hin) hc16)) (shapeCast S16 (pair0_last.sl.v2069_2 d L tab k r g1 g2 hR hin) hc16)) (shapeCast S16 (pair0_last.sl.v2105_2 d L tab k r g1 g2 hR hin) hc16)) (shapeCast S16 (pair0_last.sl.v2141_2 d L tab k r g1 g2 hR hin) hc16)) (shapeCast S16 (pair0_last.sl.v2177_2 d L tab k r g1 g2 hR hin) hc16)) (shapeCast S16 (pair0_last.sl.v2213_2 d L tab k r g1 g2 hR hin) hc16)) (shapeCast S16 (pair0_last.sl.v1462 d L tab k r g1 g2 hR hin) hc16)) (shapeCast S16 (pair0_last.sl.v1496 d L tab k r g1 g2 hR hin) hc16)) hc1 x = Spec.bagPartial fl tab (128 * (wL L).val + 16 * (2 * t1.val) + (2 * k.val)) (16 * 0 + (x 2).val) 50 := fun x => by
      rw [sA0_0, sA0_1, sA0_2, sA0_3, sA0_4, sA0_5, sA0_6, sA0_7, sA0_8, sA0_9, sA0_10, sA0_11, sA0_12, sA0_13, sA0_14, sA0_15, sA0_16, sA0_17, sA0_18, sA0_19, sA0_20, sA0_21, sA0_22, sA0_23, sA0_24, sA0_25, sA0_26, sA0_27, sA0_28, sA0_29, sA0_30, sA0_31, sA0_32, sA0_33, sA0_34, sA0_35, sA0_36, sA0_37, sA0_38, sA0_39, sA0_40, sA0_41, sA0_42, sA0_43, sA0_44, sA0_45, sA0_46, sA0_47, sA0_48, sA0_49]; exact payload_ok fl tab (wL L).val (2 * t1.val) (2 * k.val) ⟨0, by decide⟩ hc1 x
    have sA1_0 : addf (AccMath.accVec (rowF fl tab (wL L).val (2 * t1.val) (2 * k.val)) (offF fl (wL L).val (2 * t1.val) (2 * k.val)) 1 0) (shapeCast S16 (pair0_last.sl.v1681 d L tab k r g1 g2 hR hin) hc16) = AccMath.accVec (rowF fl tab (wL L).val (2 * t1.val) (2 * k.val)) (offF fl (wL L).val (2 * t1.val) (2 * k.val)) 1 1 :=
      acc_step d L fl tab (wL L).val (2 * t1.val) (2 * k.val) 0 _ (hRA _) ⟨0, by decide⟩ ⟨1, by decide⟩ _ rfl _ hwA_0 _ (k1_off9_form ⟨0, by decide⟩ _ _) _ hc16
    have sA1_1 : addf (AccMath.accVec (rowF fl tab (wL L).val (2 * t1.val) (2 * k.val)) (offF fl (wL L).val (2 * t1.val) (2 * k.val)) 1 1) (shapeCast S16 (pair0_last.sl.v1717 d L tab k r g1 g2 hR hin) hc16) = AccMath.accVec (rowF fl tab (wL L).val (2 * t1.val) (2 * k.val)) (offF fl (wL L).val (2 * t1.val) (2 * k.val)) 1 2 :=
      acc_step d L fl tab (wL L).val (2 * t1.val) (2 * k.val) 0 _ (hRA _) ⟨1, by decide⟩ ⟨1, by decide⟩ _ rfl _ hwA_1 _ (k1_off10_form ⟨0, by decide⟩ _ _) _ hc16
    have sA1_2 : addf (AccMath.accVec (rowF fl tab (wL L).val (2 * t1.val) (2 * k.val)) (offF fl (wL L).val (2 * t1.val) (2 * k.val)) 1 2) (shapeCast S16 (pair0_last.sl.v1753 d L tab k r g1 g2 hR hin) hc16) = AccMath.accVec (rowF fl tab (wL L).val (2 * t1.val) (2 * k.val)) (offF fl (wL L).val (2 * t1.val) (2 * k.val)) 1 3 :=
      acc_step d L fl tab (wL L).val (2 * t1.val) (2 * k.val) 0 _ (hRA _) ⟨2, by decide⟩ ⟨1, by decide⟩ _ rfl _ hwA_2 _ (k1_off11_form ⟨0, by decide⟩ _ _) _ hc16
    have sA1_3 : addf (AccMath.accVec (rowF fl tab (wL L).val (2 * t1.val) (2 * k.val)) (offF fl (wL L).val (2 * t1.val) (2 * k.val)) 1 3) (shapeCast S16 (pair0_last.sl.v1789 d L tab k r g1 g2 hR hin) hc16) = AccMath.accVec (rowF fl tab (wL L).val (2 * t1.val) (2 * k.val)) (offF fl (wL L).val (2 * t1.val) (2 * k.val)) 1 4 :=
      acc_step d L fl tab (wL L).val (2 * t1.val) (2 * k.val) 0 _ (hRA _) ⟨3, by decide⟩ ⟨1, by decide⟩ _ rfl _ hwA_3 _ (k1_off12_form ⟨0, by decide⟩ _ _) _ hc16
    have sA1_4 : addf (AccMath.accVec (rowF fl tab (wL L).val (2 * t1.val) (2 * k.val)) (offF fl (wL L).val (2 * t1.val) (2 * k.val)) 1 4) (shapeCast S16 (pair0_last.sl.v1825 d L tab k r g1 g2 hR hin) hc16) = AccMath.accVec (rowF fl tab (wL L).val (2 * t1.val) (2 * k.val)) (offF fl (wL L).val (2 * t1.val) (2 * k.val)) 1 5 :=
      acc_step d L fl tab (wL L).val (2 * t1.val) (2 * k.val) 0 _ (hRA _) ⟨4, by decide⟩ ⟨1, by decide⟩ _ rfl _ hwA_4 _ (k1_off13_form ⟨0, by decide⟩ _ _) _ hc16
    have sA1_5 : addf (AccMath.accVec (rowF fl tab (wL L).val (2 * t1.val) (2 * k.val)) (offF fl (wL L).val (2 * t1.val) (2 * k.val)) 1 5) (shapeCast S16 (pair0_last.sl.v1861 d L tab k r g1 g2 hR hin) hc16) = AccMath.accVec (rowF fl tab (wL L).val (2 * t1.val) (2 * k.val)) (offF fl (wL L).val (2 * t1.val) (2 * k.val)) 1 6 :=
      acc_step d L fl tab (wL L).val (2 * t1.val) (2 * k.val) 0 _ (hRA _) ⟨5, by decide⟩ ⟨1, by decide⟩ _ rfl _ hwA_5 _ (k1_off14_form ⟨0, by decide⟩ _ _) _ hc16
    have sA1_6 : addf (AccMath.accVec (rowF fl tab (wL L).val (2 * t1.val) (2 * k.val)) (offF fl (wL L).val (2 * t1.val) (2 * k.val)) 1 6) (shapeCast S16 (pair0_last.sl.v1897 d L tab k r g1 g2 hR hin) hc16) = AccMath.accVec (rowF fl tab (wL L).val (2 * t1.val) (2 * k.val)) (offF fl (wL L).val (2 * t1.val) (2 * k.val)) 1 7 :=
      acc_step d L fl tab (wL L).val (2 * t1.val) (2 * k.val) 0 _ (hRA _) ⟨6, by decide⟩ ⟨1, by decide⟩ _ rfl _ hwA_6 _ (k1_off15_form ⟨0, by decide⟩ _ _) _ hc16
    have sA1_7 : addf (AccMath.accVec (rowF fl tab (wL L).val (2 * t1.val) (2 * k.val)) (offF fl (wL L).val (2 * t1.val) (2 * k.val)) 1 7) (shapeCast S16 (pair0_last.sl.v1933 d L tab k r g1 g2 hR hin) hc16) = AccMath.accVec (rowF fl tab (wL L).val (2 * t1.val) (2 * k.val)) (offF fl (wL L).val (2 * t1.val) (2 * k.val)) 1 8 :=
      acc_step d L fl tab (wL L).val (2 * t1.val) (2 * k.val) 0 _ (hRA _) ⟨7, by decide⟩ ⟨1, by decide⟩ _ rfl _ hwA_7 _ (k1_off16_form ⟨0, by decide⟩ _ _) _ hc16
    have sA1_8 : addf (AccMath.accVec (rowF fl tab (wL L).val (2 * t1.val) (2 * k.val)) (offF fl (wL L).val (2 * t1.val) (2 * k.val)) 1 8) (shapeCast S16 (pair0_last.sl.v1969 d L tab k r g1 g2 hR hin) hc16) = AccMath.accVec (rowF fl tab (wL L).val (2 * t1.val) (2 * k.val)) (offF fl (wL L).val (2 * t1.val) (2 * k.val)) 1 9 :=
      acc_step d L fl tab (wL L).val (2 * t1.val) (2 * k.val) 0 _ (hRA _) ⟨8, by decide⟩ ⟨1, by decide⟩ _ rfl _ hwA_8 _ (k1_off17_form ⟨0, by decide⟩ _ _) _ hc16
    have sA1_9 : addf (AccMath.accVec (rowF fl tab (wL L).val (2 * t1.val) (2 * k.val)) (offF fl (wL L).val (2 * t1.val) (2 * k.val)) 1 9) (shapeCast S16 (pair0_last.sl.v2005 d L tab k r g1 g2 hR hin) hc16) = AccMath.accVec (rowF fl tab (wL L).val (2 * t1.val) (2 * k.val)) (offF fl (wL L).val (2 * t1.val) (2 * k.val)) 1 10 :=
      acc_step d L fl tab (wL L).val (2 * t1.val) (2 * k.val) 0 _ (hRA _) ⟨9, by decide⟩ ⟨1, by decide⟩ _ rfl _ hwA_9 _ (k1_off18_form ⟨0, by decide⟩ _ _) _ hc16
    have sA1_10 : addf (AccMath.accVec (rowF fl tab (wL L).val (2 * t1.val) (2 * k.val)) (offF fl (wL L).val (2 * t1.val) (2 * k.val)) 1 10) (shapeCast S16 (pair0_last.sl.v2041 d L tab k r g1 g2 hR hin) hc16) = AccMath.accVec (rowF fl tab (wL L).val (2 * t1.val) (2 * k.val)) (offF fl (wL L).val (2 * t1.val) (2 * k.val)) 1 11 :=
      acc_step d L fl tab (wL L).val (2 * t1.val) (2 * k.val) 0 _ (hRA _) ⟨10, by decide⟩ ⟨1, by decide⟩ _ rfl _ hwA_10 _ (k1_off19_form ⟨0, by decide⟩ _ _) _ hc16
    have sA1_11 : addf (AccMath.accVec (rowF fl tab (wL L).val (2 * t1.val) (2 * k.val)) (offF fl (wL L).val (2 * t1.val) (2 * k.val)) 1 11) (shapeCast S16 (pair0_last.sl.v2077 d L tab k r g1 g2 hR hin) hc16) = AccMath.accVec (rowF fl tab (wL L).val (2 * t1.val) (2 * k.val)) (offF fl (wL L).val (2 * t1.val) (2 * k.val)) 1 12 :=
      acc_step d L fl tab (wL L).val (2 * t1.val) (2 * k.val) 0 _ (hRA _) ⟨11, by decide⟩ ⟨1, by decide⟩ _ rfl _ hwA_11 _ (k1_off20_form ⟨0, by decide⟩ _ _) _ hc16
    have sA1_12 : addf (AccMath.accVec (rowF fl tab (wL L).val (2 * t1.val) (2 * k.val)) (offF fl (wL L).val (2 * t1.val) (2 * k.val)) 1 12) (shapeCast S16 (pair0_last.sl.v2113 d L tab k r g1 g2 hR hin) hc16) = AccMath.accVec (rowF fl tab (wL L).val (2 * t1.val) (2 * k.val)) (offF fl (wL L).val (2 * t1.val) (2 * k.val)) 1 13 :=
      acc_step d L fl tab (wL L).val (2 * t1.val) (2 * k.val) 0 _ (hRA _) ⟨12, by decide⟩ ⟨1, by decide⟩ _ rfl _ hwA_12 _ (k1_off21_form ⟨0, by decide⟩ _ _) _ hc16
    have sA1_13 : addf (AccMath.accVec (rowF fl tab (wL L).val (2 * t1.val) (2 * k.val)) (offF fl (wL L).val (2 * t1.val) (2 * k.val)) 1 13) (shapeCast S16 (pair0_last.sl.v2149 d L tab k r g1 g2 hR hin) hc16) = AccMath.accVec (rowF fl tab (wL L).val (2 * t1.val) (2 * k.val)) (offF fl (wL L).val (2 * t1.val) (2 * k.val)) 1 14 :=
      acc_step d L fl tab (wL L).val (2 * t1.val) (2 * k.val) 0 _ (hRA _) ⟨13, by decide⟩ ⟨1, by decide⟩ _ rfl _ hwA_13 _ (k1_off22_form ⟨0, by decide⟩ _ _) _ hc16
    have sA1_14 : addf (AccMath.accVec (rowF fl tab (wL L).val (2 * t1.val) (2 * k.val)) (offF fl (wL L).val (2 * t1.val) (2 * k.val)) 1 14) (shapeCast S16 (pair0_last.sl.v2185 d L tab k r g1 g2 hR hin) hc16) = AccMath.accVec (rowF fl tab (wL L).val (2 * t1.val) (2 * k.val)) (offF fl (wL L).val (2 * t1.val) (2 * k.val)) 1 15 :=
      acc_step d L fl tab (wL L).val (2 * t1.val) (2 * k.val) 0 _ (hRA _) ⟨14, by decide⟩ ⟨1, by decide⟩ _ rfl _ hwA_14 _ (k1_off23_form ⟨0, by decide⟩ _ _) _ hc16
    have sA1_15 : addf (AccMath.accVec (rowF fl tab (wL L).val (2 * t1.val) (2 * k.val)) (offF fl (wL L).val (2 * t1.val) (2 * k.val)) 1 15) (shapeCast S16 (pair0_last.sl.v2221 d L tab k r g1 g2 hR hin) hc16) = AccMath.accVec (rowF fl tab (wL L).val (2 * t1.val) (2 * k.val)) (offF fl (wL L).val (2 * t1.val) (2 * k.val)) 1 16 :=
      acc_step d L fl tab (wL L).val (2 * t1.val) (2 * k.val) 0 _ (hRA _) ⟨15, by decide⟩ ⟨1, by decide⟩ _ rfl _ hwA_15 _ (k1_off24_form ⟨0, by decide⟩ _ _) _ hc16
    have sA1_16 : addf (AccMath.accVec (rowF fl tab (wL L).val (2 * t1.val) (2 * k.val)) (offF fl (wL L).val (2 * t1.val) (2 * k.val)) 1 16) (shapeCast S16 (pair0_last.sl.v1681_1 d L tab k r g1 g2 hR hin) hc16) = AccMath.accVec (rowF fl tab (wL L).val (2 * t1.val) (2 * k.val)) (offF fl (wL L).val (2 * t1.val) (2 * k.val)) 1 17 :=
      acc_step d L fl tab (wL L).val (2 * t1.val) (2 * k.val) 0 _ (hRA _) ⟨16, by decide⟩ ⟨1, by decide⟩ _ rfl _ hwA_16 _ (k1_off9_form ⟨1, by decide⟩ _ _) _ hc16
    have sA1_17 : addf (AccMath.accVec (rowF fl tab (wL L).val (2 * t1.val) (2 * k.val)) (offF fl (wL L).val (2 * t1.val) (2 * k.val)) 1 17) (shapeCast S16 (pair0_last.sl.v1717_1 d L tab k r g1 g2 hR hin) hc16) = AccMath.accVec (rowF fl tab (wL L).val (2 * t1.val) (2 * k.val)) (offF fl (wL L).val (2 * t1.val) (2 * k.val)) 1 18 :=
      acc_step d L fl tab (wL L).val (2 * t1.val) (2 * k.val) 0 _ (hRA _) ⟨17, by decide⟩ ⟨1, by decide⟩ _ rfl _ hwA_17 _ (k1_off10_form ⟨1, by decide⟩ _ _) _ hc16
    have sA1_18 : addf (AccMath.accVec (rowF fl tab (wL L).val (2 * t1.val) (2 * k.val)) (offF fl (wL L).val (2 * t1.val) (2 * k.val)) 1 18) (shapeCast S16 (pair0_last.sl.v1753_1 d L tab k r g1 g2 hR hin) hc16) = AccMath.accVec (rowF fl tab (wL L).val (2 * t1.val) (2 * k.val)) (offF fl (wL L).val (2 * t1.val) (2 * k.val)) 1 19 :=
      acc_step d L fl tab (wL L).val (2 * t1.val) (2 * k.val) 0 _ (hRA _) ⟨18, by decide⟩ ⟨1, by decide⟩ _ rfl _ hwA_18 _ (k1_off11_form ⟨1, by decide⟩ _ _) _ hc16
    have sA1_19 : addf (AccMath.accVec (rowF fl tab (wL L).val (2 * t1.val) (2 * k.val)) (offF fl (wL L).val (2 * t1.val) (2 * k.val)) 1 19) (shapeCast S16 (pair0_last.sl.v1789_1 d L tab k r g1 g2 hR hin) hc16) = AccMath.accVec (rowF fl tab (wL L).val (2 * t1.val) (2 * k.val)) (offF fl (wL L).val (2 * t1.val) (2 * k.val)) 1 20 :=
      acc_step d L fl tab (wL L).val (2 * t1.val) (2 * k.val) 0 _ (hRA _) ⟨19, by decide⟩ ⟨1, by decide⟩ _ rfl _ hwA_19 _ (k1_off12_form ⟨1, by decide⟩ _ _) _ hc16
    have sA1_20 : addf (AccMath.accVec (rowF fl tab (wL L).val (2 * t1.val) (2 * k.val)) (offF fl (wL L).val (2 * t1.val) (2 * k.val)) 1 20) (shapeCast S16 (pair0_last.sl.v1825_1 d L tab k r g1 g2 hR hin) hc16) = AccMath.accVec (rowF fl tab (wL L).val (2 * t1.val) (2 * k.val)) (offF fl (wL L).val (2 * t1.val) (2 * k.val)) 1 21 :=
      acc_step d L fl tab (wL L).val (2 * t1.val) (2 * k.val) 0 _ (hRA _) ⟨20, by decide⟩ ⟨1, by decide⟩ _ rfl _ hwA_20 _ (k1_off13_form ⟨1, by decide⟩ _ _) _ hc16
    have sA1_21 : addf (AccMath.accVec (rowF fl tab (wL L).val (2 * t1.val) (2 * k.val)) (offF fl (wL L).val (2 * t1.val) (2 * k.val)) 1 21) (shapeCast S16 (pair0_last.sl.v1861_1 d L tab k r g1 g2 hR hin) hc16) = AccMath.accVec (rowF fl tab (wL L).val (2 * t1.val) (2 * k.val)) (offF fl (wL L).val (2 * t1.val) (2 * k.val)) 1 22 :=
      acc_step d L fl tab (wL L).val (2 * t1.val) (2 * k.val) 0 _ (hRA _) ⟨21, by decide⟩ ⟨1, by decide⟩ _ rfl _ hwA_21 _ (k1_off14_form ⟨1, by decide⟩ _ _) _ hc16
    have sA1_22 : addf (AccMath.accVec (rowF fl tab (wL L).val (2 * t1.val) (2 * k.val)) (offF fl (wL L).val (2 * t1.val) (2 * k.val)) 1 22) (shapeCast S16 (pair0_last.sl.v1897_1 d L tab k r g1 g2 hR hin) hc16) = AccMath.accVec (rowF fl tab (wL L).val (2 * t1.val) (2 * k.val)) (offF fl (wL L).val (2 * t1.val) (2 * k.val)) 1 23 :=
      acc_step d L fl tab (wL L).val (2 * t1.val) (2 * k.val) 0 _ (hRA _) ⟨22, by decide⟩ ⟨1, by decide⟩ _ rfl _ hwA_22 _ (k1_off15_form ⟨1, by decide⟩ _ _) _ hc16
    have sA1_23 : addf (AccMath.accVec (rowF fl tab (wL L).val (2 * t1.val) (2 * k.val)) (offF fl (wL L).val (2 * t1.val) (2 * k.val)) 1 23) (shapeCast S16 (pair0_last.sl.v1933_1 d L tab k r g1 g2 hR hin) hc16) = AccMath.accVec (rowF fl tab (wL L).val (2 * t1.val) (2 * k.val)) (offF fl (wL L).val (2 * t1.val) (2 * k.val)) 1 24 :=
      acc_step d L fl tab (wL L).val (2 * t1.val) (2 * k.val) 0 _ (hRA _) ⟨23, by decide⟩ ⟨1, by decide⟩ _ rfl _ hwA_23 _ (k1_off16_form ⟨1, by decide⟩ _ _) _ hc16
    have sA1_24 : addf (AccMath.accVec (rowF fl tab (wL L).val (2 * t1.val) (2 * k.val)) (offF fl (wL L).val (2 * t1.val) (2 * k.val)) 1 24) (shapeCast S16 (pair0_last.sl.v1969_1 d L tab k r g1 g2 hR hin) hc16) = AccMath.accVec (rowF fl tab (wL L).val (2 * t1.val) (2 * k.val)) (offF fl (wL L).val (2 * t1.val) (2 * k.val)) 1 25 :=
      acc_step d L fl tab (wL L).val (2 * t1.val) (2 * k.val) 0 _ (hRA _) ⟨24, by decide⟩ ⟨1, by decide⟩ _ rfl _ hwA_24 _ (k1_off17_form ⟨1, by decide⟩ _ _) _ hc16
    have sA1_25 : addf (AccMath.accVec (rowF fl tab (wL L).val (2 * t1.val) (2 * k.val)) (offF fl (wL L).val (2 * t1.val) (2 * k.val)) 1 25) (shapeCast S16 (pair0_last.sl.v2005_1 d L tab k r g1 g2 hR hin) hc16) = AccMath.accVec (rowF fl tab (wL L).val (2 * t1.val) (2 * k.val)) (offF fl (wL L).val (2 * t1.val) (2 * k.val)) 1 26 :=
      acc_step d L fl tab (wL L).val (2 * t1.val) (2 * k.val) 0 _ (hRA _) ⟨25, by decide⟩ ⟨1, by decide⟩ _ rfl _ hwA_25 _ (k1_off18_form ⟨1, by decide⟩ _ _) _ hc16
    have sA1_26 : addf (AccMath.accVec (rowF fl tab (wL L).val (2 * t1.val) (2 * k.val)) (offF fl (wL L).val (2 * t1.val) (2 * k.val)) 1 26) (shapeCast S16 (pair0_last.sl.v2041_1 d L tab k r g1 g2 hR hin) hc16) = AccMath.accVec (rowF fl tab (wL L).val (2 * t1.val) (2 * k.val)) (offF fl (wL L).val (2 * t1.val) (2 * k.val)) 1 27 :=
      acc_step d L fl tab (wL L).val (2 * t1.val) (2 * k.val) 0 _ (hRA _) ⟨26, by decide⟩ ⟨1, by decide⟩ _ rfl _ hwA_26 _ (k1_off19_form ⟨1, by decide⟩ _ _) _ hc16
    have sA1_27 : addf (AccMath.accVec (rowF fl tab (wL L).val (2 * t1.val) (2 * k.val)) (offF fl (wL L).val (2 * t1.val) (2 * k.val)) 1 27) (shapeCast S16 (pair0_last.sl.v2077_1 d L tab k r g1 g2 hR hin) hc16) = AccMath.accVec (rowF fl tab (wL L).val (2 * t1.val) (2 * k.val)) (offF fl (wL L).val (2 * t1.val) (2 * k.val)) 1 28 :=
      acc_step d L fl tab (wL L).val (2 * t1.val) (2 * k.val) 0 _ (hRA _) ⟨27, by decide⟩ ⟨1, by decide⟩ _ rfl _ hwA_27 _ (k1_off20_form ⟨1, by decide⟩ _ _) _ hc16
    have sA1_28 : addf (AccMath.accVec (rowF fl tab (wL L).val (2 * t1.val) (2 * k.val)) (offF fl (wL L).val (2 * t1.val) (2 * k.val)) 1 28) (shapeCast S16 (pair0_last.sl.v2113_1 d L tab k r g1 g2 hR hin) hc16) = AccMath.accVec (rowF fl tab (wL L).val (2 * t1.val) (2 * k.val)) (offF fl (wL L).val (2 * t1.val) (2 * k.val)) 1 29 :=
      acc_step d L fl tab (wL L).val (2 * t1.val) (2 * k.val) 0 _ (hRA _) ⟨28, by decide⟩ ⟨1, by decide⟩ _ rfl _ hwA_28 _ (k1_off21_form ⟨1, by decide⟩ _ _) _ hc16
    have sA1_29 : addf (AccMath.accVec (rowF fl tab (wL L).val (2 * t1.val) (2 * k.val)) (offF fl (wL L).val (2 * t1.val) (2 * k.val)) 1 29) (shapeCast S16 (pair0_last.sl.v2149_1 d L tab k r g1 g2 hR hin) hc16) = AccMath.accVec (rowF fl tab (wL L).val (2 * t1.val) (2 * k.val)) (offF fl (wL L).val (2 * t1.val) (2 * k.val)) 1 30 :=
      acc_step d L fl tab (wL L).val (2 * t1.val) (2 * k.val) 0 _ (hRA _) ⟨29, by decide⟩ ⟨1, by decide⟩ _ rfl _ hwA_29 _ (k1_off22_form ⟨1, by decide⟩ _ _) _ hc16
    have sA1_30 : addf (AccMath.accVec (rowF fl tab (wL L).val (2 * t1.val) (2 * k.val)) (offF fl (wL L).val (2 * t1.val) (2 * k.val)) 1 30) (shapeCast S16 (pair0_last.sl.v2185_1 d L tab k r g1 g2 hR hin) hc16) = AccMath.accVec (rowF fl tab (wL L).val (2 * t1.val) (2 * k.val)) (offF fl (wL L).val (2 * t1.val) (2 * k.val)) 1 31 :=
      acc_step d L fl tab (wL L).val (2 * t1.val) (2 * k.val) 0 _ (hRA _) ⟨30, by decide⟩ ⟨1, by decide⟩ _ rfl _ hwA_30 _ (k1_off23_form ⟨1, by decide⟩ _ _) _ hc16
    have sA1_31 : addf (AccMath.accVec (rowF fl tab (wL L).val (2 * t1.val) (2 * k.val)) (offF fl (wL L).val (2 * t1.val) (2 * k.val)) 1 31) (shapeCast S16 (pair0_last.sl.v2221_1 d L tab k r g1 g2 hR hin) hc16) = AccMath.accVec (rowF fl tab (wL L).val (2 * t1.val) (2 * k.val)) (offF fl (wL L).val (2 * t1.val) (2 * k.val)) 1 32 :=
      acc_step d L fl tab (wL L).val (2 * t1.val) (2 * k.val) 0 _ (hRA _) ⟨31, by decide⟩ ⟨1, by decide⟩ _ rfl _ hwA_31 _ (k1_off24_form ⟨1, by decide⟩ _ _) _ hc16
    have sA1_32 : addf (AccMath.accVec (rowF fl tab (wL L).val (2 * t1.val) (2 * k.val)) (offF fl (wL L).val (2 * t1.val) (2 * k.val)) 1 32) (shapeCast S16 (pair0_last.sl.v1681_2 d L tab k r g1 g2 hR hin) hc16) = AccMath.accVec (rowF fl tab (wL L).val (2 * t1.val) (2 * k.val)) (offF fl (wL L).val (2 * t1.val) (2 * k.val)) 1 33 :=
      acc_step d L fl tab (wL L).val (2 * t1.val) (2 * k.val) 0 _ (hRA _) ⟨32, by decide⟩ ⟨1, by decide⟩ _ rfl _ hwA_32 _ (k1_off9_form ⟨2, by decide⟩ _ _) _ hc16
    have sA1_33 : addf (AccMath.accVec (rowF fl tab (wL L).val (2 * t1.val) (2 * k.val)) (offF fl (wL L).val (2 * t1.val) (2 * k.val)) 1 33) (shapeCast S16 (pair0_last.sl.v1717_2 d L tab k r g1 g2 hR hin) hc16) = AccMath.accVec (rowF fl tab (wL L).val (2 * t1.val) (2 * k.val)) (offF fl (wL L).val (2 * t1.val) (2 * k.val)) 1 34 :=
      acc_step d L fl tab (wL L).val (2 * t1.val) (2 * k.val) 0 _ (hRA _) ⟨33, by decide⟩ ⟨1, by decide⟩ _ rfl _ hwA_33 _ (k1_off10_form ⟨2, by decide⟩ _ _) _ hc16
    have sA1_34 : addf (AccMath.accVec (rowF fl tab (wL L).val (2 * t1.val) (2 * k.val)) (offF fl (wL L).val (2 * t1.val) (2 * k.val)) 1 34) (shapeCast S16 (pair0_last.sl.v1753_2 d L tab k r g1 g2 hR hin) hc16) = AccMath.accVec (rowF fl tab (wL L).val (2 * t1.val) (2 * k.val)) (offF fl (wL L).val (2 * t1.val) (2 * k.val)) 1 35 :=
      acc_step d L fl tab (wL L).val (2 * t1.val) (2 * k.val) 0 _ (hRA _) ⟨34, by decide⟩ ⟨1, by decide⟩ _ rfl _ hwA_34 _ (k1_off11_form ⟨2, by decide⟩ _ _) _ hc16
    have sA1_35 : addf (AccMath.accVec (rowF fl tab (wL L).val (2 * t1.val) (2 * k.val)) (offF fl (wL L).val (2 * t1.val) (2 * k.val)) 1 35) (shapeCast S16 (pair0_last.sl.v1789_2 d L tab k r g1 g2 hR hin) hc16) = AccMath.accVec (rowF fl tab (wL L).val (2 * t1.val) (2 * k.val)) (offF fl (wL L).val (2 * t1.val) (2 * k.val)) 1 36 :=
      acc_step d L fl tab (wL L).val (2 * t1.val) (2 * k.val) 0 _ (hRA _) ⟨35, by decide⟩ ⟨1, by decide⟩ _ rfl _ hwA_35 _ (k1_off12_form ⟨2, by decide⟩ _ _) _ hc16
    have sA1_36 : addf (AccMath.accVec (rowF fl tab (wL L).val (2 * t1.val) (2 * k.val)) (offF fl (wL L).val (2 * t1.val) (2 * k.val)) 1 36) (shapeCast S16 (pair0_last.sl.v1825_2 d L tab k r g1 g2 hR hin) hc16) = AccMath.accVec (rowF fl tab (wL L).val (2 * t1.val) (2 * k.val)) (offF fl (wL L).val (2 * t1.val) (2 * k.val)) 1 37 :=
      acc_step d L fl tab (wL L).val (2 * t1.val) (2 * k.val) 0 _ (hRA _) ⟨36, by decide⟩ ⟨1, by decide⟩ _ rfl _ hwA_36 _ (k1_off13_form ⟨2, by decide⟩ _ _) _ hc16
    have sA1_37 : addf (AccMath.accVec (rowF fl tab (wL L).val (2 * t1.val) (2 * k.val)) (offF fl (wL L).val (2 * t1.val) (2 * k.val)) 1 37) (shapeCast S16 (pair0_last.sl.v1861_2 d L tab k r g1 g2 hR hin) hc16) = AccMath.accVec (rowF fl tab (wL L).val (2 * t1.val) (2 * k.val)) (offF fl (wL L).val (2 * t1.val) (2 * k.val)) 1 38 :=
      acc_step d L fl tab (wL L).val (2 * t1.val) (2 * k.val) 0 _ (hRA _) ⟨37, by decide⟩ ⟨1, by decide⟩ _ rfl _ hwA_37 _ (k1_off14_form ⟨2, by decide⟩ _ _) _ hc16
    have sA1_38 : addf (AccMath.accVec (rowF fl tab (wL L).val (2 * t1.val) (2 * k.val)) (offF fl (wL L).val (2 * t1.val) (2 * k.val)) 1 38) (shapeCast S16 (pair0_last.sl.v1897_2 d L tab k r g1 g2 hR hin) hc16) = AccMath.accVec (rowF fl tab (wL L).val (2 * t1.val) (2 * k.val)) (offF fl (wL L).val (2 * t1.val) (2 * k.val)) 1 39 :=
      acc_step d L fl tab (wL L).val (2 * t1.val) (2 * k.val) 0 _ (hRA _) ⟨38, by decide⟩ ⟨1, by decide⟩ _ rfl _ hwA_38 _ (k1_off15_form ⟨2, by decide⟩ _ _) _ hc16
    have sA1_39 : addf (AccMath.accVec (rowF fl tab (wL L).val (2 * t1.val) (2 * k.val)) (offF fl (wL L).val (2 * t1.val) (2 * k.val)) 1 39) (shapeCast S16 (pair0_last.sl.v1933_2 d L tab k r g1 g2 hR hin) hc16) = AccMath.accVec (rowF fl tab (wL L).val (2 * t1.val) (2 * k.val)) (offF fl (wL L).val (2 * t1.val) (2 * k.val)) 1 40 :=
      acc_step d L fl tab (wL L).val (2 * t1.val) (2 * k.val) 0 _ (hRA _) ⟨39, by decide⟩ ⟨1, by decide⟩ _ rfl _ hwA_39 _ (k1_off16_form ⟨2, by decide⟩ _ _) _ hc16
    have sA1_40 : addf (AccMath.accVec (rowF fl tab (wL L).val (2 * t1.val) (2 * k.val)) (offF fl (wL L).val (2 * t1.val) (2 * k.val)) 1 40) (shapeCast S16 (pair0_last.sl.v1969_2 d L tab k r g1 g2 hR hin) hc16) = AccMath.accVec (rowF fl tab (wL L).val (2 * t1.val) (2 * k.val)) (offF fl (wL L).val (2 * t1.val) (2 * k.val)) 1 41 :=
      acc_step d L fl tab (wL L).val (2 * t1.val) (2 * k.val) 0 _ (hRA _) ⟨40, by decide⟩ ⟨1, by decide⟩ _ rfl _ hwA_40 _ (k1_off17_form ⟨2, by decide⟩ _ _) _ hc16
    have sA1_41 : addf (AccMath.accVec (rowF fl tab (wL L).val (2 * t1.val) (2 * k.val)) (offF fl (wL L).val (2 * t1.val) (2 * k.val)) 1 41) (shapeCast S16 (pair0_last.sl.v2005_2 d L tab k r g1 g2 hR hin) hc16) = AccMath.accVec (rowF fl tab (wL L).val (2 * t1.val) (2 * k.val)) (offF fl (wL L).val (2 * t1.val) (2 * k.val)) 1 42 :=
      acc_step d L fl tab (wL L).val (2 * t1.val) (2 * k.val) 0 _ (hRA _) ⟨41, by decide⟩ ⟨1, by decide⟩ _ rfl _ hwA_41 _ (k1_off18_form ⟨2, by decide⟩ _ _) _ hc16
    have sA1_42 : addf (AccMath.accVec (rowF fl tab (wL L).val (2 * t1.val) (2 * k.val)) (offF fl (wL L).val (2 * t1.val) (2 * k.val)) 1 42) (shapeCast S16 (pair0_last.sl.v2041_2 d L tab k r g1 g2 hR hin) hc16) = AccMath.accVec (rowF fl tab (wL L).val (2 * t1.val) (2 * k.val)) (offF fl (wL L).val (2 * t1.val) (2 * k.val)) 1 43 :=
      acc_step d L fl tab (wL L).val (2 * t1.val) (2 * k.val) 0 _ (hRA _) ⟨42, by decide⟩ ⟨1, by decide⟩ _ rfl _ hwA_42 _ (k1_off19_form ⟨2, by decide⟩ _ _) _ hc16
    have sA1_43 : addf (AccMath.accVec (rowF fl tab (wL L).val (2 * t1.val) (2 * k.val)) (offF fl (wL L).val (2 * t1.val) (2 * k.val)) 1 43) (shapeCast S16 (pair0_last.sl.v2077_2 d L tab k r g1 g2 hR hin) hc16) = AccMath.accVec (rowF fl tab (wL L).val (2 * t1.val) (2 * k.val)) (offF fl (wL L).val (2 * t1.val) (2 * k.val)) 1 44 :=
      acc_step d L fl tab (wL L).val (2 * t1.val) (2 * k.val) 0 _ (hRA _) ⟨43, by decide⟩ ⟨1, by decide⟩ _ rfl _ hwA_43 _ (k1_off20_form ⟨2, by decide⟩ _ _) _ hc16
    have sA1_44 : addf (AccMath.accVec (rowF fl tab (wL L).val (2 * t1.val) (2 * k.val)) (offF fl (wL L).val (2 * t1.val) (2 * k.val)) 1 44) (shapeCast S16 (pair0_last.sl.v2113_2 d L tab k r g1 g2 hR hin) hc16) = AccMath.accVec (rowF fl tab (wL L).val (2 * t1.val) (2 * k.val)) (offF fl (wL L).val (2 * t1.val) (2 * k.val)) 1 45 :=
      acc_step d L fl tab (wL L).val (2 * t1.val) (2 * k.val) 0 _ (hRA _) ⟨44, by decide⟩ ⟨1, by decide⟩ _ rfl _ hwA_44 _ (k1_off21_form ⟨2, by decide⟩ _ _) _ hc16
    have sA1_45 : addf (AccMath.accVec (rowF fl tab (wL L).val (2 * t1.val) (2 * k.val)) (offF fl (wL L).val (2 * t1.val) (2 * k.val)) 1 45) (shapeCast S16 (pair0_last.sl.v2149_2 d L tab k r g1 g2 hR hin) hc16) = AccMath.accVec (rowF fl tab (wL L).val (2 * t1.val) (2 * k.val)) (offF fl (wL L).val (2 * t1.val) (2 * k.val)) 1 46 :=
      acc_step d L fl tab (wL L).val (2 * t1.val) (2 * k.val) 0 _ (hRA _) ⟨45, by decide⟩ ⟨1, by decide⟩ _ rfl _ hwA_45 _ (k1_off22_form ⟨2, by decide⟩ _ _) _ hc16
    have sA1_46 : addf (AccMath.accVec (rowF fl tab (wL L).val (2 * t1.val) (2 * k.val)) (offF fl (wL L).val (2 * t1.val) (2 * k.val)) 1 46) (shapeCast S16 (pair0_last.sl.v2185_2 d L tab k r g1 g2 hR hin) hc16) = AccMath.accVec (rowF fl tab (wL L).val (2 * t1.val) (2 * k.val)) (offF fl (wL L).val (2 * t1.val) (2 * k.val)) 1 47 :=
      acc_step d L fl tab (wL L).val (2 * t1.val) (2 * k.val) 0 _ (hRA _) ⟨46, by decide⟩ ⟨1, by decide⟩ _ rfl _ hwA_46 _ (k1_off23_form ⟨2, by decide⟩ _ _) _ hc16
    have sA1_47 : addf (AccMath.accVec (rowF fl tab (wL L).val (2 * t1.val) (2 * k.val)) (offF fl (wL L).val (2 * t1.val) (2 * k.val)) 1 47) (shapeCast S16 (pair0_last.sl.v2221_2 d L tab k r g1 g2 hR hin) hc16) = AccMath.accVec (rowF fl tab (wL L).val (2 * t1.val) (2 * k.val)) (offF fl (wL L).val (2 * t1.val) (2 * k.val)) 1 48 :=
      acc_step d L fl tab (wL L).val (2 * t1.val) (2 * k.val) 0 _ (hRA _) ⟨47, by decide⟩ ⟨1, by decide⟩ _ rfl _ hwA_47 _ (k1_off24_form ⟨2, by decide⟩ _ _) _ hc16
    have sA1_48 : addf (AccMath.accVec (rowF fl tab (wL L).val (2 * t1.val) (2 * k.val)) (offF fl (wL L).val (2 * t1.val) (2 * k.val)) 1 48) (shapeCast S16 (pair0_last.sl.v1470 d L tab k r g1 g2 hR hin) hc16) = AccMath.accVec (rowF fl tab (wL L).val (2 * t1.val) (2 * k.val)) (offF fl (wL L).val (2 * t1.val) (2 * k.val)) 1 49 :=
      acc_step d L fl tab (wL L).val (2 * t1.val) (2 * k.val) 0 _ (hRA _) ⟨48, by decide⟩ ⟨1, by decide⟩ _ rfl _ hwA_48 _ (k1_off26_form _ _) _ hc16
    have sA1_49 : addf (AccMath.accVec (rowF fl tab (wL L).val (2 * t1.val) (2 * k.val)) (offF fl (wL L).val (2 * t1.val) (2 * k.val)) 1 49) (shapeCast S16 (pair0_last.sl.v1504 d L tab k r g1 g2 hR hin) hc16) = AccMath.accVec (rowF fl tab (wL L).val (2 * t1.val) (2 * k.val)) (offF fl (wL L).val (2 * t1.val) (2 * k.val)) 1 50 :=
      acc_step d L fl tab (wL L).val (2 * t1.val) (2 * k.val) 0 _ (hRA _) ⟨49, by decide⟩ ⟨1, by decide⟩ _ rfl _ hwA_49 _ (k1_off27_form _ _) _ hc16
    have hPA1 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val)) (offF fl (wL L).val (2 * t1.val) (2 * k.val)) 1 0) (shapeCast S16 (pair0_last.sl.v1681 d L tab k r g1 g2 hR hin) hc16)) (shapeCast S16 (pair0_last.sl.v1717 d L tab k r g1 g2 hR hin) hc16)) (shapeCast S16 (pair0_last.sl.v1753 d L tab k r g1 g2 hR hin) hc16)) (shapeCast S16 (pair0_last.sl.v1789 d L tab k r g1 g2 hR hin) hc16)) (shapeCast S16 (pair0_last.sl.v1825 d L tab k r g1 g2 hR hin) hc16)) (shapeCast S16 (pair0_last.sl.v1861 d L tab k r g1 g2 hR hin) hc16)) (shapeCast S16 (pair0_last.sl.v1897 d L tab k r g1 g2 hR hin) hc16)) (shapeCast S16 (pair0_last.sl.v1933 d L tab k r g1 g2 hR hin) hc16)) (shapeCast S16 (pair0_last.sl.v1969 d L tab k r g1 g2 hR hin) hc16)) (shapeCast S16 (pair0_last.sl.v2005 d L tab k r g1 g2 hR hin) hc16)) (shapeCast S16 (pair0_last.sl.v2041 d L tab k r g1 g2 hR hin) hc16)) (shapeCast S16 (pair0_last.sl.v2077 d L tab k r g1 g2 hR hin) hc16)) (shapeCast S16 (pair0_last.sl.v2113 d L tab k r g1 g2 hR hin) hc16)) (shapeCast S16 (pair0_last.sl.v2149 d L tab k r g1 g2 hR hin) hc16)) (shapeCast S16 (pair0_last.sl.v2185 d L tab k r g1 g2 hR hin) hc16)) (shapeCast S16 (pair0_last.sl.v2221 d L tab k r g1 g2 hR hin) hc16)) (shapeCast S16 (pair0_last.sl.v1681_1 d L tab k r g1 g2 hR hin) hc16)) (shapeCast S16 (pair0_last.sl.v1717_1 d L tab k r g1 g2 hR hin) hc16)) (shapeCast S16 (pair0_last.sl.v1753_1 d L tab k r g1 g2 hR hin) hc16)) (shapeCast S16 (pair0_last.sl.v1789_1 d L tab k r g1 g2 hR hin) hc16)) (shapeCast S16 (pair0_last.sl.v1825_1 d L tab k r g1 g2 hR hin) hc16)) (shapeCast S16 (pair0_last.sl.v1861_1 d L tab k r g1 g2 hR hin) hc16)) (shapeCast S16 (pair0_last.sl.v1897_1 d L tab k r g1 g2 hR hin) hc16)) (shapeCast S16 (pair0_last.sl.v1933_1 d L tab k r g1 g2 hR hin) hc16)) (shapeCast S16 (pair0_last.sl.v1969_1 d L tab k r g1 g2 hR hin) hc16)) (shapeCast S16 (pair0_last.sl.v2005_1 d L tab k r g1 g2 hR hin) hc16)) (shapeCast S16 (pair0_last.sl.v2041_1 d L tab k r g1 g2 hR hin) hc16)) (shapeCast S16 (pair0_last.sl.v2077_1 d L tab k r g1 g2 hR hin) hc16)) (shapeCast S16 (pair0_last.sl.v2113_1 d L tab k r g1 g2 hR hin) hc16)) (shapeCast S16 (pair0_last.sl.v2149_1 d L tab k r g1 g2 hR hin) hc16)) (shapeCast S16 (pair0_last.sl.v2185_1 d L tab k r g1 g2 hR hin) hc16)) (shapeCast S16 (pair0_last.sl.v2221_1 d L tab k r g1 g2 hR hin) hc16)) (shapeCast S16 (pair0_last.sl.v1681_2 d L tab k r g1 g2 hR hin) hc16)) (shapeCast S16 (pair0_last.sl.v1717_2 d L tab k r g1 g2 hR hin) hc16)) (shapeCast S16 (pair0_last.sl.v1753_2 d L tab k r g1 g2 hR hin) hc16)) (shapeCast S16 (pair0_last.sl.v1789_2 d L tab k r g1 g2 hR hin) hc16)) (shapeCast S16 (pair0_last.sl.v1825_2 d L tab k r g1 g2 hR hin) hc16)) (shapeCast S16 (pair0_last.sl.v1861_2 d L tab k r g1 g2 hR hin) hc16)) (shapeCast S16 (pair0_last.sl.v1897_2 d L tab k r g1 g2 hR hin) hc16)) (shapeCast S16 (pair0_last.sl.v1933_2 d L tab k r g1 g2 hR hin) hc16)) (shapeCast S16 (pair0_last.sl.v1969_2 d L tab k r g1 g2 hR hin) hc16)) (shapeCast S16 (pair0_last.sl.v2005_2 d L tab k r g1 g2 hR hin) hc16)) (shapeCast S16 (pair0_last.sl.v2041_2 d L tab k r g1 g2 hR hin) hc16)) (shapeCast S16 (pair0_last.sl.v2077_2 d L tab k r g1 g2 hR hin) hc16)) (shapeCast S16 (pair0_last.sl.v2113_2 d L tab k r g1 g2 hR hin) hc16)) (shapeCast S16 (pair0_last.sl.v2149_2 d L tab k r g1 g2 hR hin) hc16)) (shapeCast S16 (pair0_last.sl.v2185_2 d L tab k r g1 g2 hR hin) hc16)) (shapeCast S16 (pair0_last.sl.v2221_2 d L tab k r g1 g2 hR hin) hc16)) (shapeCast S16 (pair0_last.sl.v1470 d L tab k r g1 g2 hR hin) hc16)) (shapeCast S16 (pair0_last.sl.v1504 d L tab k r g1 g2 hR hin) hc16)) hc1 x = Spec.bagPartial fl tab (128 * (wL L).val + 16 * (2 * t1.val) + (2 * k.val)) (16 * 1 + (x 2).val) 50 := fun x => by
      rw [sA1_0, sA1_1, sA1_2, sA1_3, sA1_4, sA1_5, sA1_6, sA1_7, sA1_8, sA1_9, sA1_10, sA1_11, sA1_12, sA1_13, sA1_14, sA1_15, sA1_16, sA1_17, sA1_18, sA1_19, sA1_20, sA1_21, sA1_22, sA1_23, sA1_24, sA1_25, sA1_26, sA1_27, sA1_28, sA1_29, sA1_30, sA1_31, sA1_32, sA1_33, sA1_34, sA1_35, sA1_36, sA1_37, sA1_38, sA1_39, sA1_40, sA1_41, sA1_42, sA1_43, sA1_44, sA1_45, sA1_46, sA1_47, sA1_48, sA1_49]; exact payload_ok fl tab (wL L).val (2 * t1.val) (2 * k.val) ⟨1, by decide⟩ hc1 x
    have sA2_0 : addf (AccMath.accVec (rowF fl tab (wL L).val (2 * t1.val) (2 * k.val)) (offF fl (wL L).val (2 * t1.val) (2 * k.val)) 2 0) (shapeCast S16 (pair0_last.sl.v1689 d L tab k r g1 g2 hR hin) hc16) = AccMath.accVec (rowF fl tab (wL L).val (2 * t1.val) (2 * k.val)) (offF fl (wL L).val (2 * t1.val) (2 * k.val)) 2 1 :=
      acc_step d L fl tab (wL L).val (2 * t1.val) (2 * k.val) 0 _ (hRA _) ⟨0, by decide⟩ ⟨2, by decide⟩ _ rfl _ hwA_0 _ (k1_off9_form ⟨0, by decide⟩ _ _) _ hc16
    have sA2_1 : addf (AccMath.accVec (rowF fl tab (wL L).val (2 * t1.val) (2 * k.val)) (offF fl (wL L).val (2 * t1.val) (2 * k.val)) 2 1) (shapeCast S16 (pair0_last.sl.v1725 d L tab k r g1 g2 hR hin) hc16) = AccMath.accVec (rowF fl tab (wL L).val (2 * t1.val) (2 * k.val)) (offF fl (wL L).val (2 * t1.val) (2 * k.val)) 2 2 :=
      acc_step d L fl tab (wL L).val (2 * t1.val) (2 * k.val) 0 _ (hRA _) ⟨1, by decide⟩ ⟨2, by decide⟩ _ rfl _ hwA_1 _ (k1_off10_form ⟨0, by decide⟩ _ _) _ hc16
    have sA2_2 : addf (AccMath.accVec (rowF fl tab (wL L).val (2 * t1.val) (2 * k.val)) (offF fl (wL L).val (2 * t1.val) (2 * k.val)) 2 2) (shapeCast S16 (pair0_last.sl.v1761 d L tab k r g1 g2 hR hin) hc16) = AccMath.accVec (rowF fl tab (wL L).val (2 * t1.val) (2 * k.val)) (offF fl (wL L).val (2 * t1.val) (2 * k.val)) 2 3 :=
      acc_step d L fl tab (wL L).val (2 * t1.val) (2 * k.val) 0 _ (hRA _) ⟨2, by decide⟩ ⟨2, by decide⟩ _ rfl _ hwA_2 _ (k1_off11_form ⟨0, by decide⟩ _ _) _ hc16
    have sA2_3 : addf (AccMath.accVec (rowF fl tab (wL L).val (2 * t1.val) (2 * k.val)) (offF fl (wL L).val (2 * t1.val) (2 * k.val)) 2 3) (shapeCast S16 (pair0_last.sl.v1797 d L tab k r g1 g2 hR hin) hc16) = AccMath.accVec (rowF fl tab (wL L).val (2 * t1.val) (2 * k.val)) (offF fl (wL L).val (2 * t1.val) (2 * k.val)) 2 4 :=
      acc_step d L fl tab (wL L).val (2 * t1.val) (2 * k.val) 0 _ (hRA _) ⟨3, by decide⟩ ⟨2, by decide⟩ _ rfl _ hwA_3 _ (k1_off12_form ⟨0, by decide⟩ _ _) _ hc16
    have sA2_4 : addf (AccMath.accVec (rowF fl tab (wL L).val (2 * t1.val) (2 * k.val)) (offF fl (wL L).val (2 * t1.val) (2 * k.val)) 2 4) (shapeCast S16 (pair0_last.sl.v1833 d L tab k r g1 g2 hR hin) hc16) = AccMath.accVec (rowF fl tab (wL L).val (2 * t1.val) (2 * k.val)) (offF fl (wL L).val (2 * t1.val) (2 * k.val)) 2 5 :=
      acc_step d L fl tab (wL L).val (2 * t1.val) (2 * k.val) 0 _ (hRA _) ⟨4, by decide⟩ ⟨2, by decide⟩ _ rfl _ hwA_4 _ (k1_off13_form ⟨0, by decide⟩ _ _) _ hc16
    have sA2_5 : addf (AccMath.accVec (rowF fl tab (wL L).val (2 * t1.val) (2 * k.val)) (offF fl (wL L).val (2 * t1.val) (2 * k.val)) 2 5) (shapeCast S16 (pair0_last.sl.v1869 d L tab k r g1 g2 hR hin) hc16) = AccMath.accVec (rowF fl tab (wL L).val (2 * t1.val) (2 * k.val)) (offF fl (wL L).val (2 * t1.val) (2 * k.val)) 2 6 :=
      acc_step d L fl tab (wL L).val (2 * t1.val) (2 * k.val) 0 _ (hRA _) ⟨5, by decide⟩ ⟨2, by decide⟩ _ rfl _ hwA_5 _ (k1_off14_form ⟨0, by decide⟩ _ _) _ hc16
    have sA2_6 : addf (AccMath.accVec (rowF fl tab (wL L).val (2 * t1.val) (2 * k.val)) (offF fl (wL L).val (2 * t1.val) (2 * k.val)) 2 6) (shapeCast S16 (pair0_last.sl.v1905 d L tab k r g1 g2 hR hin) hc16) = AccMath.accVec (rowF fl tab (wL L).val (2 * t1.val) (2 * k.val)) (offF fl (wL L).val (2 * t1.val) (2 * k.val)) 2 7 :=
      acc_step d L fl tab (wL L).val (2 * t1.val) (2 * k.val) 0 _ (hRA _) ⟨6, by decide⟩ ⟨2, by decide⟩ _ rfl _ hwA_6 _ (k1_off15_form ⟨0, by decide⟩ _ _) _ hc16
    have sA2_7 : addf (AccMath.accVec (rowF fl tab (wL L).val (2 * t1.val) (2 * k.val)) (offF fl (wL L).val (2 * t1.val) (2 * k.val)) 2 7) (shapeCast S16 (pair0_last.sl.v1941 d L tab k r g1 g2 hR hin) hc16) = AccMath.accVec (rowF fl tab (wL L).val (2 * t1.val) (2 * k.val)) (offF fl (wL L).val (2 * t1.val) (2 * k.val)) 2 8 :=
      acc_step d L fl tab (wL L).val (2 * t1.val) (2 * k.val) 0 _ (hRA _) ⟨7, by decide⟩ ⟨2, by decide⟩ _ rfl _ hwA_7 _ (k1_off16_form ⟨0, by decide⟩ _ _) _ hc16
    have sA2_8 : addf (AccMath.accVec (rowF fl tab (wL L).val (2 * t1.val) (2 * k.val)) (offF fl (wL L).val (2 * t1.val) (2 * k.val)) 2 8) (shapeCast S16 (pair0_last.sl.v1977 d L tab k r g1 g2 hR hin) hc16) = AccMath.accVec (rowF fl tab (wL L).val (2 * t1.val) (2 * k.val)) (offF fl (wL L).val (2 * t1.val) (2 * k.val)) 2 9 :=
      acc_step d L fl tab (wL L).val (2 * t1.val) (2 * k.val) 0 _ (hRA _) ⟨8, by decide⟩ ⟨2, by decide⟩ _ rfl _ hwA_8 _ (k1_off17_form ⟨0, by decide⟩ _ _) _ hc16
    have sA2_9 : addf (AccMath.accVec (rowF fl tab (wL L).val (2 * t1.val) (2 * k.val)) (offF fl (wL L).val (2 * t1.val) (2 * k.val)) 2 9) (shapeCast S16 (pair0_last.sl.v2013 d L tab k r g1 g2 hR hin) hc16) = AccMath.accVec (rowF fl tab (wL L).val (2 * t1.val) (2 * k.val)) (offF fl (wL L).val (2 * t1.val) (2 * k.val)) 2 10 :=
      acc_step d L fl tab (wL L).val (2 * t1.val) (2 * k.val) 0 _ (hRA _) ⟨9, by decide⟩ ⟨2, by decide⟩ _ rfl _ hwA_9 _ (k1_off18_form ⟨0, by decide⟩ _ _) _ hc16
    have sA2_10 : addf (AccMath.accVec (rowF fl tab (wL L).val (2 * t1.val) (2 * k.val)) (offF fl (wL L).val (2 * t1.val) (2 * k.val)) 2 10) (shapeCast S16 (pair0_last.sl.v2049 d L tab k r g1 g2 hR hin) hc16) = AccMath.accVec (rowF fl tab (wL L).val (2 * t1.val) (2 * k.val)) (offF fl (wL L).val (2 * t1.val) (2 * k.val)) 2 11 :=
      acc_step d L fl tab (wL L).val (2 * t1.val) (2 * k.val) 0 _ (hRA _) ⟨10, by decide⟩ ⟨2, by decide⟩ _ rfl _ hwA_10 _ (k1_off19_form ⟨0, by decide⟩ _ _) _ hc16
    have sA2_11 : addf (AccMath.accVec (rowF fl tab (wL L).val (2 * t1.val) (2 * k.val)) (offF fl (wL L).val (2 * t1.val) (2 * k.val)) 2 11) (shapeCast S16 (pair0_last.sl.v2085 d L tab k r g1 g2 hR hin) hc16) = AccMath.accVec (rowF fl tab (wL L).val (2 * t1.val) (2 * k.val)) (offF fl (wL L).val (2 * t1.val) (2 * k.val)) 2 12 :=
      acc_step d L fl tab (wL L).val (2 * t1.val) (2 * k.val) 0 _ (hRA _) ⟨11, by decide⟩ ⟨2, by decide⟩ _ rfl _ hwA_11 _ (k1_off20_form ⟨0, by decide⟩ _ _) _ hc16
    have sA2_12 : addf (AccMath.accVec (rowF fl tab (wL L).val (2 * t1.val) (2 * k.val)) (offF fl (wL L).val (2 * t1.val) (2 * k.val)) 2 12) (shapeCast S16 (pair0_last.sl.v2121 d L tab k r g1 g2 hR hin) hc16) = AccMath.accVec (rowF fl tab (wL L).val (2 * t1.val) (2 * k.val)) (offF fl (wL L).val (2 * t1.val) (2 * k.val)) 2 13 :=
      acc_step d L fl tab (wL L).val (2 * t1.val) (2 * k.val) 0 _ (hRA _) ⟨12, by decide⟩ ⟨2, by decide⟩ _ rfl _ hwA_12 _ (k1_off21_form ⟨0, by decide⟩ _ _) _ hc16
    have sA2_13 : addf (AccMath.accVec (rowF fl tab (wL L).val (2 * t1.val) (2 * k.val)) (offF fl (wL L).val (2 * t1.val) (2 * k.val)) 2 13) (shapeCast S16 (pair0_last.sl.v2157 d L tab k r g1 g2 hR hin) hc16) = AccMath.accVec (rowF fl tab (wL L).val (2 * t1.val) (2 * k.val)) (offF fl (wL L).val (2 * t1.val) (2 * k.val)) 2 14 :=
      acc_step d L fl tab (wL L).val (2 * t1.val) (2 * k.val) 0 _ (hRA _) ⟨13, by decide⟩ ⟨2, by decide⟩ _ rfl _ hwA_13 _ (k1_off22_form ⟨0, by decide⟩ _ _) _ hc16
    have sA2_14 : addf (AccMath.accVec (rowF fl tab (wL L).val (2 * t1.val) (2 * k.val)) (offF fl (wL L).val (2 * t1.val) (2 * k.val)) 2 14) (shapeCast S16 (pair0_last.sl.v2193 d L tab k r g1 g2 hR hin) hc16) = AccMath.accVec (rowF fl tab (wL L).val (2 * t1.val) (2 * k.val)) (offF fl (wL L).val (2 * t1.val) (2 * k.val)) 2 15 :=
      acc_step d L fl tab (wL L).val (2 * t1.val) (2 * k.val) 0 _ (hRA _) ⟨14, by decide⟩ ⟨2, by decide⟩ _ rfl _ hwA_14 _ (k1_off23_form ⟨0, by decide⟩ _ _) _ hc16
    have sA2_15 : addf (AccMath.accVec (rowF fl tab (wL L).val (2 * t1.val) (2 * k.val)) (offF fl (wL L).val (2 * t1.val) (2 * k.val)) 2 15) (shapeCast S16 (pair0_last.sl.v2229 d L tab k r g1 g2 hR hin) hc16) = AccMath.accVec (rowF fl tab (wL L).val (2 * t1.val) (2 * k.val)) (offF fl (wL L).val (2 * t1.val) (2 * k.val)) 2 16 :=
      acc_step d L fl tab (wL L).val (2 * t1.val) (2 * k.val) 0 _ (hRA _) ⟨15, by decide⟩ ⟨2, by decide⟩ _ rfl _ hwA_15 _ (k1_off24_form ⟨0, by decide⟩ _ _) _ hc16
    have sA2_16 : addf (AccMath.accVec (rowF fl tab (wL L).val (2 * t1.val) (2 * k.val)) (offF fl (wL L).val (2 * t1.val) (2 * k.val)) 2 16) (shapeCast S16 (pair0_last.sl.v1689_1 d L tab k r g1 g2 hR hin) hc16) = AccMath.accVec (rowF fl tab (wL L).val (2 * t1.val) (2 * k.val)) (offF fl (wL L).val (2 * t1.val) (2 * k.val)) 2 17 :=
      acc_step d L fl tab (wL L).val (2 * t1.val) (2 * k.val) 0 _ (hRA _) ⟨16, by decide⟩ ⟨2, by decide⟩ _ rfl _ hwA_16 _ (k1_off9_form ⟨1, by decide⟩ _ _) _ hc16
    have sA2_17 : addf (AccMath.accVec (rowF fl tab (wL L).val (2 * t1.val) (2 * k.val)) (offF fl (wL L).val (2 * t1.val) (2 * k.val)) 2 17) (shapeCast S16 (pair0_last.sl.v1725_1 d L tab k r g1 g2 hR hin) hc16) = AccMath.accVec (rowF fl tab (wL L).val (2 * t1.val) (2 * k.val)) (offF fl (wL L).val (2 * t1.val) (2 * k.val)) 2 18 :=
      acc_step d L fl tab (wL L).val (2 * t1.val) (2 * k.val) 0 _ (hRA _) ⟨17, by decide⟩ ⟨2, by decide⟩ _ rfl _ hwA_17 _ (k1_off10_form ⟨1, by decide⟩ _ _) _ hc16
    have sA2_18 : addf (AccMath.accVec (rowF fl tab (wL L).val (2 * t1.val) (2 * k.val)) (offF fl (wL L).val (2 * t1.val) (2 * k.val)) 2 18) (shapeCast S16 (pair0_last.sl.v1761_1 d L tab k r g1 g2 hR hin) hc16) = AccMath.accVec (rowF fl tab (wL L).val (2 * t1.val) (2 * k.val)) (offF fl (wL L).val (2 * t1.val) (2 * k.val)) 2 19 :=
      acc_step d L fl tab (wL L).val (2 * t1.val) (2 * k.val) 0 _ (hRA _) ⟨18, by decide⟩ ⟨2, by decide⟩ _ rfl _ hwA_18 _ (k1_off11_form ⟨1, by decide⟩ _ _) _ hc16
    have sA2_19 : addf (AccMath.accVec (rowF fl tab (wL L).val (2 * t1.val) (2 * k.val)) (offF fl (wL L).val (2 * t1.val) (2 * k.val)) 2 19) (shapeCast S16 (pair0_last.sl.v1797_1 d L tab k r g1 g2 hR hin) hc16) = AccMath.accVec (rowF fl tab (wL L).val (2 * t1.val) (2 * k.val)) (offF fl (wL L).val (2 * t1.val) (2 * k.val)) 2 20 :=
      acc_step d L fl tab (wL L).val (2 * t1.val) (2 * k.val) 0 _ (hRA _) ⟨19, by decide⟩ ⟨2, by decide⟩ _ rfl _ hwA_19 _ (k1_off12_form ⟨1, by decide⟩ _ _) _ hc16
    have sA2_20 : addf (AccMath.accVec (rowF fl tab (wL L).val (2 * t1.val) (2 * k.val)) (offF fl (wL L).val (2 * t1.val) (2 * k.val)) 2 20) (shapeCast S16 (pair0_last.sl.v1833_1 d L tab k r g1 g2 hR hin) hc16) = AccMath.accVec (rowF fl tab (wL L).val (2 * t1.val) (2 * k.val)) (offF fl (wL L).val (2 * t1.val) (2 * k.val)) 2 21 :=
      acc_step d L fl tab (wL L).val (2 * t1.val) (2 * k.val) 0 _ (hRA _) ⟨20, by decide⟩ ⟨2, by decide⟩ _ rfl _ hwA_20 _ (k1_off13_form ⟨1, by decide⟩ _ _) _ hc16
    have sA2_21 : addf (AccMath.accVec (rowF fl tab (wL L).val (2 * t1.val) (2 * k.val)) (offF fl (wL L).val (2 * t1.val) (2 * k.val)) 2 21) (shapeCast S16 (pair0_last.sl.v1869_1 d L tab k r g1 g2 hR hin) hc16) = AccMath.accVec (rowF fl tab (wL L).val (2 * t1.val) (2 * k.val)) (offF fl (wL L).val (2 * t1.val) (2 * k.val)) 2 22 :=
      acc_step d L fl tab (wL L).val (2 * t1.val) (2 * k.val) 0 _ (hRA _) ⟨21, by decide⟩ ⟨2, by decide⟩ _ rfl _ hwA_21 _ (k1_off14_form ⟨1, by decide⟩ _ _) _ hc16
    have sA2_22 : addf (AccMath.accVec (rowF fl tab (wL L).val (2 * t1.val) (2 * k.val)) (offF fl (wL L).val (2 * t1.val) (2 * k.val)) 2 22) (shapeCast S16 (pair0_last.sl.v1905_1 d L tab k r g1 g2 hR hin) hc16) = AccMath.accVec (rowF fl tab (wL L).val (2 * t1.val) (2 * k.val)) (offF fl (wL L).val (2 * t1.val) (2 * k.val)) 2 23 :=
      acc_step d L fl tab (wL L).val (2 * t1.val) (2 * k.val) 0 _ (hRA _) ⟨22, by decide⟩ ⟨2, by decide⟩ _ rfl _ hwA_22 _ (k1_off15_form ⟨1, by decide⟩ _ _) _ hc16
    have sA2_23 : addf (AccMath.accVec (rowF fl tab (wL L).val (2 * t1.val) (2 * k.val)) (offF fl (wL L).val (2 * t1.val) (2 * k.val)) 2 23) (shapeCast S16 (pair0_last.sl.v1941_1 d L tab k r g1 g2 hR hin) hc16) = AccMath.accVec (rowF fl tab (wL L).val (2 * t1.val) (2 * k.val)) (offF fl (wL L).val (2 * t1.val) (2 * k.val)) 2 24 :=
      acc_step d L fl tab (wL L).val (2 * t1.val) (2 * k.val) 0 _ (hRA _) ⟨23, by decide⟩ ⟨2, by decide⟩ _ rfl _ hwA_23 _ (k1_off16_form ⟨1, by decide⟩ _ _) _ hc16
    have sA2_24 : addf (AccMath.accVec (rowF fl tab (wL L).val (2 * t1.val) (2 * k.val)) (offF fl (wL L).val (2 * t1.val) (2 * k.val)) 2 24) (shapeCast S16 (pair0_last.sl.v1977_1 d L tab k r g1 g2 hR hin) hc16) = AccMath.accVec (rowF fl tab (wL L).val (2 * t1.val) (2 * k.val)) (offF fl (wL L).val (2 * t1.val) (2 * k.val)) 2 25 :=
      acc_step d L fl tab (wL L).val (2 * t1.val) (2 * k.val) 0 _ (hRA _) ⟨24, by decide⟩ ⟨2, by decide⟩ _ rfl _ hwA_24 _ (k1_off17_form ⟨1, by decide⟩ _ _) _ hc16
    have sA2_25 : addf (AccMath.accVec (rowF fl tab (wL L).val (2 * t1.val) (2 * k.val)) (offF fl (wL L).val (2 * t1.val) (2 * k.val)) 2 25) (shapeCast S16 (pair0_last.sl.v2013_1 d L tab k r g1 g2 hR hin) hc16) = AccMath.accVec (rowF fl tab (wL L).val (2 * t1.val) (2 * k.val)) (offF fl (wL L).val (2 * t1.val) (2 * k.val)) 2 26 :=
      acc_step d L fl tab (wL L).val (2 * t1.val) (2 * k.val) 0 _ (hRA _) ⟨25, by decide⟩ ⟨2, by decide⟩ _ rfl _ hwA_25 _ (k1_off18_form ⟨1, by decide⟩ _ _) _ hc16
    have sA2_26 : addf (AccMath.accVec (rowF fl tab (wL L).val (2 * t1.val) (2 * k.val)) (offF fl (wL L).val (2 * t1.val) (2 * k.val)) 2 26) (shapeCast S16 (pair0_last.sl.v2049_1 d L tab k r g1 g2 hR hin) hc16) = AccMath.accVec (rowF fl tab (wL L).val (2 * t1.val) (2 * k.val)) (offF fl (wL L).val (2 * t1.val) (2 * k.val)) 2 27 :=
      acc_step d L fl tab (wL L).val (2 * t1.val) (2 * k.val) 0 _ (hRA _) ⟨26, by decide⟩ ⟨2, by decide⟩ _ rfl _ hwA_26 _ (k1_off19_form ⟨1, by decide⟩ _ _) _ hc16
    have sA2_27 : addf (AccMath.accVec (rowF fl tab (wL L).val (2 * t1.val) (2 * k.val)) (offF fl (wL L).val (2 * t1.val) (2 * k.val)) 2 27) (shapeCast S16 (pair0_last.sl.v2085_1 d L tab k r g1 g2 hR hin) hc16) = AccMath.accVec (rowF fl tab (wL L).val (2 * t1.val) (2 * k.val)) (offF fl (wL L).val (2 * t1.val) (2 * k.val)) 2 28 :=
      acc_step d L fl tab (wL L).val (2 * t1.val) (2 * k.val) 0 _ (hRA _) ⟨27, by decide⟩ ⟨2, by decide⟩ _ rfl _ hwA_27 _ (k1_off20_form ⟨1, by decide⟩ _ _) _ hc16
    have sA2_28 : addf (AccMath.accVec (rowF fl tab (wL L).val (2 * t1.val) (2 * k.val)) (offF fl (wL L).val (2 * t1.val) (2 * k.val)) 2 28) (shapeCast S16 (pair0_last.sl.v2121_1 d L tab k r g1 g2 hR hin) hc16) = AccMath.accVec (rowF fl tab (wL L).val (2 * t1.val) (2 * k.val)) (offF fl (wL L).val (2 * t1.val) (2 * k.val)) 2 29 :=
      acc_step d L fl tab (wL L).val (2 * t1.val) (2 * k.val) 0 _ (hRA _) ⟨28, by decide⟩ ⟨2, by decide⟩ _ rfl _ hwA_28 _ (k1_off21_form ⟨1, by decide⟩ _ _) _ hc16
    have sA2_29 : addf (AccMath.accVec (rowF fl tab (wL L).val (2 * t1.val) (2 * k.val)) (offF fl (wL L).val (2 * t1.val) (2 * k.val)) 2 29) (shapeCast S16 (pair0_last.sl.v2157_1 d L tab k r g1 g2 hR hin) hc16) = AccMath.accVec (rowF fl tab (wL L).val (2 * t1.val) (2 * k.val)) (offF fl (wL L).val (2 * t1.val) (2 * k.val)) 2 30 :=
      acc_step d L fl tab (wL L).val (2 * t1.val) (2 * k.val) 0 _ (hRA _) ⟨29, by decide⟩ ⟨2, by decide⟩ _ rfl _ hwA_29 _ (k1_off22_form ⟨1, by decide⟩ _ _) _ hc16
    have sA2_30 : addf (AccMath.accVec (rowF fl tab (wL L).val (2 * t1.val) (2 * k.val)) (offF fl (wL L).val (2 * t1.val) (2 * k.val)) 2 30) (shapeCast S16 (pair0_last.sl.v2193_1 d L tab k r g1 g2 hR hin) hc16) = AccMath.accVec (rowF fl tab (wL L).val (2 * t1.val) (2 * k.val)) (offF fl (wL L).val (2 * t1.val) (2 * k.val)) 2 31 :=
      acc_step d L fl tab (wL L).val (2 * t1.val) (2 * k.val) 0 _ (hRA _) ⟨30, by decide⟩ ⟨2, by decide⟩ _ rfl _ hwA_30 _ (k1_off23_form ⟨1, by decide⟩ _ _) _ hc16
    have sA2_31 : addf (AccMath.accVec (rowF fl tab (wL L).val (2 * t1.val) (2 * k.val)) (offF fl (wL L).val (2 * t1.val) (2 * k.val)) 2 31) (shapeCast S16 (pair0_last.sl.v2229_1 d L tab k r g1 g2 hR hin) hc16) = AccMath.accVec (rowF fl tab (wL L).val (2 * t1.val) (2 * k.val)) (offF fl (wL L).val (2 * t1.val) (2 * k.val)) 2 32 :=
      acc_step d L fl tab (wL L).val (2 * t1.val) (2 * k.val) 0 _ (hRA _) ⟨31, by decide⟩ ⟨2, by decide⟩ _ rfl _ hwA_31 _ (k1_off24_form ⟨1, by decide⟩ _ _) _ hc16
    have sA2_32 : addf (AccMath.accVec (rowF fl tab (wL L).val (2 * t1.val) (2 * k.val)) (offF fl (wL L).val (2 * t1.val) (2 * k.val)) 2 32) (shapeCast S16 (pair0_last.sl.v1689_2 d L tab k r g1 g2 hR hin) hc16) = AccMath.accVec (rowF fl tab (wL L).val (2 * t1.val) (2 * k.val)) (offF fl (wL L).val (2 * t1.val) (2 * k.val)) 2 33 :=
      acc_step d L fl tab (wL L).val (2 * t1.val) (2 * k.val) 0 _ (hRA _) ⟨32, by decide⟩ ⟨2, by decide⟩ _ rfl _ hwA_32 _ (k1_off9_form ⟨2, by decide⟩ _ _) _ hc16
    have sA2_33 : addf (AccMath.accVec (rowF fl tab (wL L).val (2 * t1.val) (2 * k.val)) (offF fl (wL L).val (2 * t1.val) (2 * k.val)) 2 33) (shapeCast S16 (pair0_last.sl.v1725_2 d L tab k r g1 g2 hR hin) hc16) = AccMath.accVec (rowF fl tab (wL L).val (2 * t1.val) (2 * k.val)) (offF fl (wL L).val (2 * t1.val) (2 * k.val)) 2 34 :=
      acc_step d L fl tab (wL L).val (2 * t1.val) (2 * k.val) 0 _ (hRA _) ⟨33, by decide⟩ ⟨2, by decide⟩ _ rfl _ hwA_33 _ (k1_off10_form ⟨2, by decide⟩ _ _) _ hc16
    have sA2_34 : addf (AccMath.accVec (rowF fl tab (wL L).val (2 * t1.val) (2 * k.val)) (offF fl (wL L).val (2 * t1.val) (2 * k.val)) 2 34) (shapeCast S16 (pair0_last.sl.v1761_2 d L tab k r g1 g2 hR hin) hc16) = AccMath.accVec (rowF fl tab (wL L).val (2 * t1.val) (2 * k.val)) (offF fl (wL L).val (2 * t1.val) (2 * k.val)) 2 35 :=
      acc_step d L fl tab (wL L).val (2 * t1.val) (2 * k.val) 0 _ (hRA _) ⟨34, by decide⟩ ⟨2, by decide⟩ _ rfl _ hwA_34 _ (k1_off11_form ⟨2, by decide⟩ _ _) _ hc16
    have sA2_35 : addf (AccMath.accVec (rowF fl tab (wL L).val (2 * t1.val) (2 * k.val)) (offF fl (wL L).val (2 * t1.val) (2 * k.val)) 2 35) (shapeCast S16 (pair0_last.sl.v1797_2 d L tab k r g1 g2 hR hin) hc16) = AccMath.accVec (rowF fl tab (wL L).val (2 * t1.val) (2 * k.val)) (offF fl (wL L).val (2 * t1.val) (2 * k.val)) 2 36 :=
      acc_step d L fl tab (wL L).val (2 * t1.val) (2 * k.val) 0 _ (hRA _) ⟨35, by decide⟩ ⟨2, by decide⟩ _ rfl _ hwA_35 _ (k1_off12_form ⟨2, by decide⟩ _ _) _ hc16
    have sA2_36 : addf (AccMath.accVec (rowF fl tab (wL L).val (2 * t1.val) (2 * k.val)) (offF fl (wL L).val (2 * t1.val) (2 * k.val)) 2 36) (shapeCast S16 (pair0_last.sl.v1833_2 d L tab k r g1 g2 hR hin) hc16) = AccMath.accVec (rowF fl tab (wL L).val (2 * t1.val) (2 * k.val)) (offF fl (wL L).val (2 * t1.val) (2 * k.val)) 2 37 :=
      acc_step d L fl tab (wL L).val (2 * t1.val) (2 * k.val) 0 _ (hRA _) ⟨36, by decide⟩ ⟨2, by decide⟩ _ rfl _ hwA_36 _ (k1_off13_form ⟨2, by decide⟩ _ _) _ hc16
    have sA2_37 : addf (AccMath.accVec (rowF fl tab (wL L).val (2 * t1.val) (2 * k.val)) (offF fl (wL L).val (2 * t1.val) (2 * k.val)) 2 37) (shapeCast S16 (pair0_last.sl.v1869_2 d L tab k r g1 g2 hR hin) hc16) = AccMath.accVec (rowF fl tab (wL L).val (2 * t1.val) (2 * k.val)) (offF fl (wL L).val (2 * t1.val) (2 * k.val)) 2 38 :=
      acc_step d L fl tab (wL L).val (2 * t1.val) (2 * k.val) 0 _ (hRA _) ⟨37, by decide⟩ ⟨2, by decide⟩ _ rfl _ hwA_37 _ (k1_off14_form ⟨2, by decide⟩ _ _) _ hc16
    have sA2_38 : addf (AccMath.accVec (rowF fl tab (wL L).val (2 * t1.val) (2 * k.val)) (offF fl (wL L).val (2 * t1.val) (2 * k.val)) 2 38) (shapeCast S16 (pair0_last.sl.v1905_2 d L tab k r g1 g2 hR hin) hc16) = AccMath.accVec (rowF fl tab (wL L).val (2 * t1.val) (2 * k.val)) (offF fl (wL L).val (2 * t1.val) (2 * k.val)) 2 39 :=
      acc_step d L fl tab (wL L).val (2 * t1.val) (2 * k.val) 0 _ (hRA _) ⟨38, by decide⟩ ⟨2, by decide⟩ _ rfl _ hwA_38 _ (k1_off15_form ⟨2, by decide⟩ _ _) _ hc16
    have sA2_39 : addf (AccMath.accVec (rowF fl tab (wL L).val (2 * t1.val) (2 * k.val)) (offF fl (wL L).val (2 * t1.val) (2 * k.val)) 2 39) (shapeCast S16 (pair0_last.sl.v1941_2 d L tab k r g1 g2 hR hin) hc16) = AccMath.accVec (rowF fl tab (wL L).val (2 * t1.val) (2 * k.val)) (offF fl (wL L).val (2 * t1.val) (2 * k.val)) 2 40 :=
      acc_step d L fl tab (wL L).val (2 * t1.val) (2 * k.val) 0 _ (hRA _) ⟨39, by decide⟩ ⟨2, by decide⟩ _ rfl _ hwA_39 _ (k1_off16_form ⟨2, by decide⟩ _ _) _ hc16
    have sA2_40 : addf (AccMath.accVec (rowF fl tab (wL L).val (2 * t1.val) (2 * k.val)) (offF fl (wL L).val (2 * t1.val) (2 * k.val)) 2 40) (shapeCast S16 (pair0_last.sl.v1977_2 d L tab k r g1 g2 hR hin) hc16) = AccMath.accVec (rowF fl tab (wL L).val (2 * t1.val) (2 * k.val)) (offF fl (wL L).val (2 * t1.val) (2 * k.val)) 2 41 :=
      acc_step d L fl tab (wL L).val (2 * t1.val) (2 * k.val) 0 _ (hRA _) ⟨40, by decide⟩ ⟨2, by decide⟩ _ rfl _ hwA_40 _ (k1_off17_form ⟨2, by decide⟩ _ _) _ hc16
    have sA2_41 : addf (AccMath.accVec (rowF fl tab (wL L).val (2 * t1.val) (2 * k.val)) (offF fl (wL L).val (2 * t1.val) (2 * k.val)) 2 41) (shapeCast S16 (pair0_last.sl.v2013_2 d L tab k r g1 g2 hR hin) hc16) = AccMath.accVec (rowF fl tab (wL L).val (2 * t1.val) (2 * k.val)) (offF fl (wL L).val (2 * t1.val) (2 * k.val)) 2 42 :=
      acc_step d L fl tab (wL L).val (2 * t1.val) (2 * k.val) 0 _ (hRA _) ⟨41, by decide⟩ ⟨2, by decide⟩ _ rfl _ hwA_41 _ (k1_off18_form ⟨2, by decide⟩ _ _) _ hc16
    have sA2_42 : addf (AccMath.accVec (rowF fl tab (wL L).val (2 * t1.val) (2 * k.val)) (offF fl (wL L).val (2 * t1.val) (2 * k.val)) 2 42) (shapeCast S16 (pair0_last.sl.v2049_2 d L tab k r g1 g2 hR hin) hc16) = AccMath.accVec (rowF fl tab (wL L).val (2 * t1.val) (2 * k.val)) (offF fl (wL L).val (2 * t1.val) (2 * k.val)) 2 43 :=
      acc_step d L fl tab (wL L).val (2 * t1.val) (2 * k.val) 0 _ (hRA _) ⟨42, by decide⟩ ⟨2, by decide⟩ _ rfl _ hwA_42 _ (k1_off19_form ⟨2, by decide⟩ _ _) _ hc16
    have sA2_43 : addf (AccMath.accVec (rowF fl tab (wL L).val (2 * t1.val) (2 * k.val)) (offF fl (wL L).val (2 * t1.val) (2 * k.val)) 2 43) (shapeCast S16 (pair0_last.sl.v2085_2 d L tab k r g1 g2 hR hin) hc16) = AccMath.accVec (rowF fl tab (wL L).val (2 * t1.val) (2 * k.val)) (offF fl (wL L).val (2 * t1.val) (2 * k.val)) 2 44 :=
      acc_step d L fl tab (wL L).val (2 * t1.val) (2 * k.val) 0 _ (hRA _) ⟨43, by decide⟩ ⟨2, by decide⟩ _ rfl _ hwA_43 _ (k1_off20_form ⟨2, by decide⟩ _ _) _ hc16
    have sA2_44 : addf (AccMath.accVec (rowF fl tab (wL L).val (2 * t1.val) (2 * k.val)) (offF fl (wL L).val (2 * t1.val) (2 * k.val)) 2 44) (shapeCast S16 (pair0_last.sl.v2121_2 d L tab k r g1 g2 hR hin) hc16) = AccMath.accVec (rowF fl tab (wL L).val (2 * t1.val) (2 * k.val)) (offF fl (wL L).val (2 * t1.val) (2 * k.val)) 2 45 :=
      acc_step d L fl tab (wL L).val (2 * t1.val) (2 * k.val) 0 _ (hRA _) ⟨44, by decide⟩ ⟨2, by decide⟩ _ rfl _ hwA_44 _ (k1_off21_form ⟨2, by decide⟩ _ _) _ hc16
    have sA2_45 : addf (AccMath.accVec (rowF fl tab (wL L).val (2 * t1.val) (2 * k.val)) (offF fl (wL L).val (2 * t1.val) (2 * k.val)) 2 45) (shapeCast S16 (pair0_last.sl.v2157_2 d L tab k r g1 g2 hR hin) hc16) = AccMath.accVec (rowF fl tab (wL L).val (2 * t1.val) (2 * k.val)) (offF fl (wL L).val (2 * t1.val) (2 * k.val)) 2 46 :=
      acc_step d L fl tab (wL L).val (2 * t1.val) (2 * k.val) 0 _ (hRA _) ⟨45, by decide⟩ ⟨2, by decide⟩ _ rfl _ hwA_45 _ (k1_off22_form ⟨2, by decide⟩ _ _) _ hc16
    have sA2_46 : addf (AccMath.accVec (rowF fl tab (wL L).val (2 * t1.val) (2 * k.val)) (offF fl (wL L).val (2 * t1.val) (2 * k.val)) 2 46) (shapeCast S16 (pair0_last.sl.v2193_2 d L tab k r g1 g2 hR hin) hc16) = AccMath.accVec (rowF fl tab (wL L).val (2 * t1.val) (2 * k.val)) (offF fl (wL L).val (2 * t1.val) (2 * k.val)) 2 47 :=
      acc_step d L fl tab (wL L).val (2 * t1.val) (2 * k.val) 0 _ (hRA _) ⟨46, by decide⟩ ⟨2, by decide⟩ _ rfl _ hwA_46 _ (k1_off23_form ⟨2, by decide⟩ _ _) _ hc16
    have sA2_47 : addf (AccMath.accVec (rowF fl tab (wL L).val (2 * t1.val) (2 * k.val)) (offF fl (wL L).val (2 * t1.val) (2 * k.val)) 2 47) (shapeCast S16 (pair0_last.sl.v2229_2 d L tab k r g1 g2 hR hin) hc16) = AccMath.accVec (rowF fl tab (wL L).val (2 * t1.val) (2 * k.val)) (offF fl (wL L).val (2 * t1.val) (2 * k.val)) 2 48 :=
      acc_step d L fl tab (wL L).val (2 * t1.val) (2 * k.val) 0 _ (hRA _) ⟨47, by decide⟩ ⟨2, by decide⟩ _ rfl _ hwA_47 _ (k1_off24_form ⟨2, by decide⟩ _ _) _ hc16
    have sA2_48 : addf (AccMath.accVec (rowF fl tab (wL L).val (2 * t1.val) (2 * k.val)) (offF fl (wL L).val (2 * t1.val) (2 * k.val)) 2 48) (shapeCast S16 (pair0_last.sl.v1478 d L tab k r g1 g2 hR hin) hc16) = AccMath.accVec (rowF fl tab (wL L).val (2 * t1.val) (2 * k.val)) (offF fl (wL L).val (2 * t1.val) (2 * k.val)) 2 49 :=
      acc_step d L fl tab (wL L).val (2 * t1.val) (2 * k.val) 0 _ (hRA _) ⟨48, by decide⟩ ⟨2, by decide⟩ _ rfl _ hwA_48 _ (k1_off26_form _ _) _ hc16
    have sA2_49 : addf (AccMath.accVec (rowF fl tab (wL L).val (2 * t1.val) (2 * k.val)) (offF fl (wL L).val (2 * t1.val) (2 * k.val)) 2 49) (shapeCast S16 (pair0_last.sl.v1512 d L tab k r g1 g2 hR hin) hc16) = AccMath.accVec (rowF fl tab (wL L).val (2 * t1.val) (2 * k.val)) (offF fl (wL L).val (2 * t1.val) (2 * k.val)) 2 50 :=
      acc_step d L fl tab (wL L).val (2 * t1.val) (2 * k.val) 0 _ (hRA _) ⟨49, by decide⟩ ⟨2, by decide⟩ _ rfl _ hwA_49 _ (k1_off27_form _ _) _ hc16
    have hPA2 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val)) (offF fl (wL L).val (2 * t1.val) (2 * k.val)) 2 0) (shapeCast S16 (pair0_last.sl.v1689 d L tab k r g1 g2 hR hin) hc16)) (shapeCast S16 (pair0_last.sl.v1725 d L tab k r g1 g2 hR hin) hc16)) (shapeCast S16 (pair0_last.sl.v1761 d L tab k r g1 g2 hR hin) hc16)) (shapeCast S16 (pair0_last.sl.v1797 d L tab k r g1 g2 hR hin) hc16)) (shapeCast S16 (pair0_last.sl.v1833 d L tab k r g1 g2 hR hin) hc16)) (shapeCast S16 (pair0_last.sl.v1869 d L tab k r g1 g2 hR hin) hc16)) (shapeCast S16 (pair0_last.sl.v1905 d L tab k r g1 g2 hR hin) hc16)) (shapeCast S16 (pair0_last.sl.v1941 d L tab k r g1 g2 hR hin) hc16)) (shapeCast S16 (pair0_last.sl.v1977 d L tab k r g1 g2 hR hin) hc16)) (shapeCast S16 (pair0_last.sl.v2013 d L tab k r g1 g2 hR hin) hc16)) (shapeCast S16 (pair0_last.sl.v2049 d L tab k r g1 g2 hR hin) hc16)) (shapeCast S16 (pair0_last.sl.v2085 d L tab k r g1 g2 hR hin) hc16)) (shapeCast S16 (pair0_last.sl.v2121 d L tab k r g1 g2 hR hin) hc16)) (shapeCast S16 (pair0_last.sl.v2157 d L tab k r g1 g2 hR hin) hc16)) (shapeCast S16 (pair0_last.sl.v2193 d L tab k r g1 g2 hR hin) hc16)) (shapeCast S16 (pair0_last.sl.v2229 d L tab k r g1 g2 hR hin) hc16)) (shapeCast S16 (pair0_last.sl.v1689_1 d L tab k r g1 g2 hR hin) hc16)) (shapeCast S16 (pair0_last.sl.v1725_1 d L tab k r g1 g2 hR hin) hc16)) (shapeCast S16 (pair0_last.sl.v1761_1 d L tab k r g1 g2 hR hin) hc16)) (shapeCast S16 (pair0_last.sl.v1797_1 d L tab k r g1 g2 hR hin) hc16)) (shapeCast S16 (pair0_last.sl.v1833_1 d L tab k r g1 g2 hR hin) hc16)) (shapeCast S16 (pair0_last.sl.v1869_1 d L tab k r g1 g2 hR hin) hc16)) (shapeCast S16 (pair0_last.sl.v1905_1 d L tab k r g1 g2 hR hin) hc16)) (shapeCast S16 (pair0_last.sl.v1941_1 d L tab k r g1 g2 hR hin) hc16)) (shapeCast S16 (pair0_last.sl.v1977_1 d L tab k r g1 g2 hR hin) hc16)) (shapeCast S16 (pair0_last.sl.v2013_1 d L tab k r g1 g2 hR hin) hc16)) (shapeCast S16 (pair0_last.sl.v2049_1 d L tab k r g1 g2 hR hin) hc16)) (shapeCast S16 (pair0_last.sl.v2085_1 d L tab k r g1 g2 hR hin) hc16)) (shapeCast S16 (pair0_last.sl.v2121_1 d L tab k r g1 g2 hR hin) hc16)) (shapeCast S16 (pair0_last.sl.v2157_1 d L tab k r g1 g2 hR hin) hc16)) (shapeCast S16 (pair0_last.sl.v2193_1 d L tab k r g1 g2 hR hin) hc16)) (shapeCast S16 (pair0_last.sl.v2229_1 d L tab k r g1 g2 hR hin) hc16)) (shapeCast S16 (pair0_last.sl.v1689_2 d L tab k r g1 g2 hR hin) hc16)) (shapeCast S16 (pair0_last.sl.v1725_2 d L tab k r g1 g2 hR hin) hc16)) (shapeCast S16 (pair0_last.sl.v1761_2 d L tab k r g1 g2 hR hin) hc16)) (shapeCast S16 (pair0_last.sl.v1797_2 d L tab k r g1 g2 hR hin) hc16)) (shapeCast S16 (pair0_last.sl.v1833_2 d L tab k r g1 g2 hR hin) hc16)) (shapeCast S16 (pair0_last.sl.v1869_2 d L tab k r g1 g2 hR hin) hc16)) (shapeCast S16 (pair0_last.sl.v1905_2 d L tab k r g1 g2 hR hin) hc16)) (shapeCast S16 (pair0_last.sl.v1941_2 d L tab k r g1 g2 hR hin) hc16)) (shapeCast S16 (pair0_last.sl.v1977_2 d L tab k r g1 g2 hR hin) hc16)) (shapeCast S16 (pair0_last.sl.v2013_2 d L tab k r g1 g2 hR hin) hc16)) (shapeCast S16 (pair0_last.sl.v2049_2 d L tab k r g1 g2 hR hin) hc16)) (shapeCast S16 (pair0_last.sl.v2085_2 d L tab k r g1 g2 hR hin) hc16)) (shapeCast S16 (pair0_last.sl.v2121_2 d L tab k r g1 g2 hR hin) hc16)) (shapeCast S16 (pair0_last.sl.v2157_2 d L tab k r g1 g2 hR hin) hc16)) (shapeCast S16 (pair0_last.sl.v2193_2 d L tab k r g1 g2 hR hin) hc16)) (shapeCast S16 (pair0_last.sl.v2229_2 d L tab k r g1 g2 hR hin) hc16)) (shapeCast S16 (pair0_last.sl.v1478 d L tab k r g1 g2 hR hin) hc16)) (shapeCast S16 (pair0_last.sl.v1512 d L tab k r g1 g2 hR hin) hc16)) hc1 x = Spec.bagPartial fl tab (128 * (wL L).val + 16 * (2 * t1.val) + (2 * k.val)) (16 * 2 + (x 2).val) 50 := fun x => by
      rw [sA2_0, sA2_1, sA2_2, sA2_3, sA2_4, sA2_5, sA2_6, sA2_7, sA2_8, sA2_9, sA2_10, sA2_11, sA2_12, sA2_13, sA2_14, sA2_15, sA2_16, sA2_17, sA2_18, sA2_19, sA2_20, sA2_21, sA2_22, sA2_23, sA2_24, sA2_25, sA2_26, sA2_27, sA2_28, sA2_29, sA2_30, sA2_31, sA2_32, sA2_33, sA2_34, sA2_35, sA2_36, sA2_37, sA2_38, sA2_39, sA2_40, sA2_41, sA2_42, sA2_43, sA2_44, sA2_45, sA2_46, sA2_47, sA2_48, sA2_49]; exact payload_ok fl tab (wL L).val (2 * t1.val) (2 * k.val) ⟨2, by decide⟩ hc1 x
    have sA3_0 : addf (AccMath.accVec (rowF fl tab (wL L).val (2 * t1.val) (2 * k.val)) (offF fl (wL L).val (2 * t1.val) (2 * k.val)) 3 0) (shapeCast S16 (pair0_last.sl.v1697 d L tab k r g1 g2 hR hin) hc16) = AccMath.accVec (rowF fl tab (wL L).val (2 * t1.val) (2 * k.val)) (offF fl (wL L).val (2 * t1.val) (2 * k.val)) 3 1 :=
      acc_step d L fl tab (wL L).val (2 * t1.val) (2 * k.val) 0 _ (hRA _) ⟨0, by decide⟩ ⟨3, by decide⟩ _ rfl _ hwA_0 _ (k1_off9_form ⟨0, by decide⟩ _ _) _ hc16
    have sA3_1 : addf (AccMath.accVec (rowF fl tab (wL L).val (2 * t1.val) (2 * k.val)) (offF fl (wL L).val (2 * t1.val) (2 * k.val)) 3 1) (shapeCast S16 (pair0_last.sl.v1733 d L tab k r g1 g2 hR hin) hc16) = AccMath.accVec (rowF fl tab (wL L).val (2 * t1.val) (2 * k.val)) (offF fl (wL L).val (2 * t1.val) (2 * k.val)) 3 2 :=
      acc_step d L fl tab (wL L).val (2 * t1.val) (2 * k.val) 0 _ (hRA _) ⟨1, by decide⟩ ⟨3, by decide⟩ _ rfl _ hwA_1 _ (k1_off10_form ⟨0, by decide⟩ _ _) _ hc16
    have sA3_2 : addf (AccMath.accVec (rowF fl tab (wL L).val (2 * t1.val) (2 * k.val)) (offF fl (wL L).val (2 * t1.val) (2 * k.val)) 3 2) (shapeCast S16 (pair0_last.sl.v1769 d L tab k r g1 g2 hR hin) hc16) = AccMath.accVec (rowF fl tab (wL L).val (2 * t1.val) (2 * k.val)) (offF fl (wL L).val (2 * t1.val) (2 * k.val)) 3 3 :=
      acc_step d L fl tab (wL L).val (2 * t1.val) (2 * k.val) 0 _ (hRA _) ⟨2, by decide⟩ ⟨3, by decide⟩ _ rfl _ hwA_2 _ (k1_off11_form ⟨0, by decide⟩ _ _) _ hc16
    have sA3_3 : addf (AccMath.accVec (rowF fl tab (wL L).val (2 * t1.val) (2 * k.val)) (offF fl (wL L).val (2 * t1.val) (2 * k.val)) 3 3) (shapeCast S16 (pair0_last.sl.v1805 d L tab k r g1 g2 hR hin) hc16) = AccMath.accVec (rowF fl tab (wL L).val (2 * t1.val) (2 * k.val)) (offF fl (wL L).val (2 * t1.val) (2 * k.val)) 3 4 :=
      acc_step d L fl tab (wL L).val (2 * t1.val) (2 * k.val) 0 _ (hRA _) ⟨3, by decide⟩ ⟨3, by decide⟩ _ rfl _ hwA_3 _ (k1_off12_form ⟨0, by decide⟩ _ _) _ hc16
    have sA3_4 : addf (AccMath.accVec (rowF fl tab (wL L).val (2 * t1.val) (2 * k.val)) (offF fl (wL L).val (2 * t1.val) (2 * k.val)) 3 4) (shapeCast S16 (pair0_last.sl.v1841 d L tab k r g1 g2 hR hin) hc16) = AccMath.accVec (rowF fl tab (wL L).val (2 * t1.val) (2 * k.val)) (offF fl (wL L).val (2 * t1.val) (2 * k.val)) 3 5 :=
      acc_step d L fl tab (wL L).val (2 * t1.val) (2 * k.val) 0 _ (hRA _) ⟨4, by decide⟩ ⟨3, by decide⟩ _ rfl _ hwA_4 _ (k1_off13_form ⟨0, by decide⟩ _ _) _ hc16
    have sA3_5 : addf (AccMath.accVec (rowF fl tab (wL L).val (2 * t1.val) (2 * k.val)) (offF fl (wL L).val (2 * t1.val) (2 * k.val)) 3 5) (shapeCast S16 (pair0_last.sl.v1877 d L tab k r g1 g2 hR hin) hc16) = AccMath.accVec (rowF fl tab (wL L).val (2 * t1.val) (2 * k.val)) (offF fl (wL L).val (2 * t1.val) (2 * k.val)) 3 6 :=
      acc_step d L fl tab (wL L).val (2 * t1.val) (2 * k.val) 0 _ (hRA _) ⟨5, by decide⟩ ⟨3, by decide⟩ _ rfl _ hwA_5 _ (k1_off14_form ⟨0, by decide⟩ _ _) _ hc16
    have sA3_6 : addf (AccMath.accVec (rowF fl tab (wL L).val (2 * t1.val) (2 * k.val)) (offF fl (wL L).val (2 * t1.val) (2 * k.val)) 3 6) (shapeCast S16 (pair0_last.sl.v1913 d L tab k r g1 g2 hR hin) hc16) = AccMath.accVec (rowF fl tab (wL L).val (2 * t1.val) (2 * k.val)) (offF fl (wL L).val (2 * t1.val) (2 * k.val)) 3 7 :=
      acc_step d L fl tab (wL L).val (2 * t1.val) (2 * k.val) 0 _ (hRA _) ⟨6, by decide⟩ ⟨3, by decide⟩ _ rfl _ hwA_6 _ (k1_off15_form ⟨0, by decide⟩ _ _) _ hc16
    have sA3_7 : addf (AccMath.accVec (rowF fl tab (wL L).val (2 * t1.val) (2 * k.val)) (offF fl (wL L).val (2 * t1.val) (2 * k.val)) 3 7) (shapeCast S16 (pair0_last.sl.v1949 d L tab k r g1 g2 hR hin) hc16) = AccMath.accVec (rowF fl tab (wL L).val (2 * t1.val) (2 * k.val)) (offF fl (wL L).val (2 * t1.val) (2 * k.val)) 3 8 :=
      acc_step d L fl tab (wL L).val (2 * t1.val) (2 * k.val) 0 _ (hRA _) ⟨7, by decide⟩ ⟨3, by decide⟩ _ rfl _ hwA_7 _ (k1_off16_form ⟨0, by decide⟩ _ _) _ hc16
    have sA3_8 : addf (AccMath.accVec (rowF fl tab (wL L).val (2 * t1.val) (2 * k.val)) (offF fl (wL L).val (2 * t1.val) (2 * k.val)) 3 8) (shapeCast S16 (pair0_last.sl.v1985 d L tab k r g1 g2 hR hin) hc16) = AccMath.accVec (rowF fl tab (wL L).val (2 * t1.val) (2 * k.val)) (offF fl (wL L).val (2 * t1.val) (2 * k.val)) 3 9 :=
      acc_step d L fl tab (wL L).val (2 * t1.val) (2 * k.val) 0 _ (hRA _) ⟨8, by decide⟩ ⟨3, by decide⟩ _ rfl _ hwA_8 _ (k1_off17_form ⟨0, by decide⟩ _ _) _ hc16
    have sA3_9 : addf (AccMath.accVec (rowF fl tab (wL L).val (2 * t1.val) (2 * k.val)) (offF fl (wL L).val (2 * t1.val) (2 * k.val)) 3 9) (shapeCast S16 (pair0_last.sl.v2021 d L tab k r g1 g2 hR hin) hc16) = AccMath.accVec (rowF fl tab (wL L).val (2 * t1.val) (2 * k.val)) (offF fl (wL L).val (2 * t1.val) (2 * k.val)) 3 10 :=
      acc_step d L fl tab (wL L).val (2 * t1.val) (2 * k.val) 0 _ (hRA _) ⟨9, by decide⟩ ⟨3, by decide⟩ _ rfl _ hwA_9 _ (k1_off18_form ⟨0, by decide⟩ _ _) _ hc16
    have sA3_10 : addf (AccMath.accVec (rowF fl tab (wL L).val (2 * t1.val) (2 * k.val)) (offF fl (wL L).val (2 * t1.val) (2 * k.val)) 3 10) (shapeCast S16 (pair0_last.sl.v2057 d L tab k r g1 g2 hR hin) hc16) = AccMath.accVec (rowF fl tab (wL L).val (2 * t1.val) (2 * k.val)) (offF fl (wL L).val (2 * t1.val) (2 * k.val)) 3 11 :=
      acc_step d L fl tab (wL L).val (2 * t1.val) (2 * k.val) 0 _ (hRA _) ⟨10, by decide⟩ ⟨3, by decide⟩ _ rfl _ hwA_10 _ (k1_off19_form ⟨0, by decide⟩ _ _) _ hc16
    have sA3_11 : addf (AccMath.accVec (rowF fl tab (wL L).val (2 * t1.val) (2 * k.val)) (offF fl (wL L).val (2 * t1.val) (2 * k.val)) 3 11) (shapeCast S16 (pair0_last.sl.v2093 d L tab k r g1 g2 hR hin) hc16) = AccMath.accVec (rowF fl tab (wL L).val (2 * t1.val) (2 * k.val)) (offF fl (wL L).val (2 * t1.val) (2 * k.val)) 3 12 :=
      acc_step d L fl tab (wL L).val (2 * t1.val) (2 * k.val) 0 _ (hRA _) ⟨11, by decide⟩ ⟨3, by decide⟩ _ rfl _ hwA_11 _ (k1_off20_form ⟨0, by decide⟩ _ _) _ hc16
    have sA3_12 : addf (AccMath.accVec (rowF fl tab (wL L).val (2 * t1.val) (2 * k.val)) (offF fl (wL L).val (2 * t1.val) (2 * k.val)) 3 12) (shapeCast S16 (pair0_last.sl.v2129 d L tab k r g1 g2 hR hin) hc16) = AccMath.accVec (rowF fl tab (wL L).val (2 * t1.val) (2 * k.val)) (offF fl (wL L).val (2 * t1.val) (2 * k.val)) 3 13 :=
      acc_step d L fl tab (wL L).val (2 * t1.val) (2 * k.val) 0 _ (hRA _) ⟨12, by decide⟩ ⟨3, by decide⟩ _ rfl _ hwA_12 _ (k1_off21_form ⟨0, by decide⟩ _ _) _ hc16
    have sA3_13 : addf (AccMath.accVec (rowF fl tab (wL L).val (2 * t1.val) (2 * k.val)) (offF fl (wL L).val (2 * t1.val) (2 * k.val)) 3 13) (shapeCast S16 (pair0_last.sl.v2165 d L tab k r g1 g2 hR hin) hc16) = AccMath.accVec (rowF fl tab (wL L).val (2 * t1.val) (2 * k.val)) (offF fl (wL L).val (2 * t1.val) (2 * k.val)) 3 14 :=
      acc_step d L fl tab (wL L).val (2 * t1.val) (2 * k.val) 0 _ (hRA _) ⟨13, by decide⟩ ⟨3, by decide⟩ _ rfl _ hwA_13 _ (k1_off22_form ⟨0, by decide⟩ _ _) _ hc16
    have sA3_14 : addf (AccMath.accVec (rowF fl tab (wL L).val (2 * t1.val) (2 * k.val)) (offF fl (wL L).val (2 * t1.val) (2 * k.val)) 3 14) (shapeCast S16 (pair0_last.sl.v2201 d L tab k r g1 g2 hR hin) hc16) = AccMath.accVec (rowF fl tab (wL L).val (2 * t1.val) (2 * k.val)) (offF fl (wL L).val (2 * t1.val) (2 * k.val)) 3 15 :=
      acc_step d L fl tab (wL L).val (2 * t1.val) (2 * k.val) 0 _ (hRA _) ⟨14, by decide⟩ ⟨3, by decide⟩ _ rfl _ hwA_14 _ (k1_off23_form ⟨0, by decide⟩ _ _) _ hc16
    have sA3_15 : addf (AccMath.accVec (rowF fl tab (wL L).val (2 * t1.val) (2 * k.val)) (offF fl (wL L).val (2 * t1.val) (2 * k.val)) 3 15) (shapeCast S16 (pair0_last.sl.v2237 d L tab k r g1 g2 hR hin) hc16) = AccMath.accVec (rowF fl tab (wL L).val (2 * t1.val) (2 * k.val)) (offF fl (wL L).val (2 * t1.val) (2 * k.val)) 3 16 :=
      acc_step d L fl tab (wL L).val (2 * t1.val) (2 * k.val) 0 _ (hRA _) ⟨15, by decide⟩ ⟨3, by decide⟩ _ rfl _ hwA_15 _ (k1_off24_form ⟨0, by decide⟩ _ _) _ hc16
    have sA3_16 : addf (AccMath.accVec (rowF fl tab (wL L).val (2 * t1.val) (2 * k.val)) (offF fl (wL L).val (2 * t1.val) (2 * k.val)) 3 16) (shapeCast S16 (pair0_last.sl.v1697_1 d L tab k r g1 g2 hR hin) hc16) = AccMath.accVec (rowF fl tab (wL L).val (2 * t1.val) (2 * k.val)) (offF fl (wL L).val (2 * t1.val) (2 * k.val)) 3 17 :=
      acc_step d L fl tab (wL L).val (2 * t1.val) (2 * k.val) 0 _ (hRA _) ⟨16, by decide⟩ ⟨3, by decide⟩ _ rfl _ hwA_16 _ (k1_off9_form ⟨1, by decide⟩ _ _) _ hc16
    have sA3_17 : addf (AccMath.accVec (rowF fl tab (wL L).val (2 * t1.val) (2 * k.val)) (offF fl (wL L).val (2 * t1.val) (2 * k.val)) 3 17) (shapeCast S16 (pair0_last.sl.v1733_1 d L tab k r g1 g2 hR hin) hc16) = AccMath.accVec (rowF fl tab (wL L).val (2 * t1.val) (2 * k.val)) (offF fl (wL L).val (2 * t1.val) (2 * k.val)) 3 18 :=
      acc_step d L fl tab (wL L).val (2 * t1.val) (2 * k.val) 0 _ (hRA _) ⟨17, by decide⟩ ⟨3, by decide⟩ _ rfl _ hwA_17 _ (k1_off10_form ⟨1, by decide⟩ _ _) _ hc16
    have sA3_18 : addf (AccMath.accVec (rowF fl tab (wL L).val (2 * t1.val) (2 * k.val)) (offF fl (wL L).val (2 * t1.val) (2 * k.val)) 3 18) (shapeCast S16 (pair0_last.sl.v1769_1 d L tab k r g1 g2 hR hin) hc16) = AccMath.accVec (rowF fl tab (wL L).val (2 * t1.val) (2 * k.val)) (offF fl (wL L).val (2 * t1.val) (2 * k.val)) 3 19 :=
      acc_step d L fl tab (wL L).val (2 * t1.val) (2 * k.val) 0 _ (hRA _) ⟨18, by decide⟩ ⟨3, by decide⟩ _ rfl _ hwA_18 _ (k1_off11_form ⟨1, by decide⟩ _ _) _ hc16
    have sA3_19 : addf (AccMath.accVec (rowF fl tab (wL L).val (2 * t1.val) (2 * k.val)) (offF fl (wL L).val (2 * t1.val) (2 * k.val)) 3 19) (shapeCast S16 (pair0_last.sl.v1805_1 d L tab k r g1 g2 hR hin) hc16) = AccMath.accVec (rowF fl tab (wL L).val (2 * t1.val) (2 * k.val)) (offF fl (wL L).val (2 * t1.val) (2 * k.val)) 3 20 :=
      acc_step d L fl tab (wL L).val (2 * t1.val) (2 * k.val) 0 _ (hRA _) ⟨19, by decide⟩ ⟨3, by decide⟩ _ rfl _ hwA_19 _ (k1_off12_form ⟨1, by decide⟩ _ _) _ hc16
    have sA3_20 : addf (AccMath.accVec (rowF fl tab (wL L).val (2 * t1.val) (2 * k.val)) (offF fl (wL L).val (2 * t1.val) (2 * k.val)) 3 20) (shapeCast S16 (pair0_last.sl.v1841_1 d L tab k r g1 g2 hR hin) hc16) = AccMath.accVec (rowF fl tab (wL L).val (2 * t1.val) (2 * k.val)) (offF fl (wL L).val (2 * t1.val) (2 * k.val)) 3 21 :=
      acc_step d L fl tab (wL L).val (2 * t1.val) (2 * k.val) 0 _ (hRA _) ⟨20, by decide⟩ ⟨3, by decide⟩ _ rfl _ hwA_20 _ (k1_off13_form ⟨1, by decide⟩ _ _) _ hc16
    have sA3_21 : addf (AccMath.accVec (rowF fl tab (wL L).val (2 * t1.val) (2 * k.val)) (offF fl (wL L).val (2 * t1.val) (2 * k.val)) 3 21) (shapeCast S16 (pair0_last.sl.v1877_1 d L tab k r g1 g2 hR hin) hc16) = AccMath.accVec (rowF fl tab (wL L).val (2 * t1.val) (2 * k.val)) (offF fl (wL L).val (2 * t1.val) (2 * k.val)) 3 22 :=
      acc_step d L fl tab (wL L).val (2 * t1.val) (2 * k.val) 0 _ (hRA _) ⟨21, by decide⟩ ⟨3, by decide⟩ _ rfl _ hwA_21 _ (k1_off14_form ⟨1, by decide⟩ _ _) _ hc16
    have sA3_22 : addf (AccMath.accVec (rowF fl tab (wL L).val (2 * t1.val) (2 * k.val)) (offF fl (wL L).val (2 * t1.val) (2 * k.val)) 3 22) (shapeCast S16 (pair0_last.sl.v1913_1 d L tab k r g1 g2 hR hin) hc16) = AccMath.accVec (rowF fl tab (wL L).val (2 * t1.val) (2 * k.val)) (offF fl (wL L).val (2 * t1.val) (2 * k.val)) 3 23 :=
      acc_step d L fl tab (wL L).val (2 * t1.val) (2 * k.val) 0 _ (hRA _) ⟨22, by decide⟩ ⟨3, by decide⟩ _ rfl _ hwA_22 _ (k1_off15_form ⟨1, by decide⟩ _ _) _ hc16
    have sA3_23 : addf (AccMath.accVec (rowF fl tab (wL L).val (2 * t1.val) (2 * k.val)) (offF fl (wL L).val (2 * t1.val) (2 * k.val)) 3 23) (shapeCast S16 (pair0_last.sl.v1949_1 d L tab k r g1 g2 hR hin) hc16) = AccMath.accVec (rowF fl tab (wL L).val (2 * t1.val) (2 * k.val)) (offF fl (wL L).val (2 * t1.val) (2 * k.val)) 3 24 :=
      acc_step d L fl tab (wL L).val (2 * t1.val) (2 * k.val) 0 _ (hRA _) ⟨23, by decide⟩ ⟨3, by decide⟩ _ rfl _ hwA_23 _ (k1_off16_form ⟨1, by decide⟩ _ _) _ hc16
    have sA3_24 : addf (AccMath.accVec (rowF fl tab (wL L).val (2 * t1.val) (2 * k.val)) (offF fl (wL L).val (2 * t1.val) (2 * k.val)) 3 24) (shapeCast S16 (pair0_last.sl.v1985_1 d L tab k r g1 g2 hR hin) hc16) = AccMath.accVec (rowF fl tab (wL L).val (2 * t1.val) (2 * k.val)) (offF fl (wL L).val (2 * t1.val) (2 * k.val)) 3 25 :=
      acc_step d L fl tab (wL L).val (2 * t1.val) (2 * k.val) 0 _ (hRA _) ⟨24, by decide⟩ ⟨3, by decide⟩ _ rfl _ hwA_24 _ (k1_off17_form ⟨1, by decide⟩ _ _) _ hc16
    have sA3_25 : addf (AccMath.accVec (rowF fl tab (wL L).val (2 * t1.val) (2 * k.val)) (offF fl (wL L).val (2 * t1.val) (2 * k.val)) 3 25) (shapeCast S16 (pair0_last.sl.v2021_1 d L tab k r g1 g2 hR hin) hc16) = AccMath.accVec (rowF fl tab (wL L).val (2 * t1.val) (2 * k.val)) (offF fl (wL L).val (2 * t1.val) (2 * k.val)) 3 26 :=
      acc_step d L fl tab (wL L).val (2 * t1.val) (2 * k.val) 0 _ (hRA _) ⟨25, by decide⟩ ⟨3, by decide⟩ _ rfl _ hwA_25 _ (k1_off18_form ⟨1, by decide⟩ _ _) _ hc16
    have sA3_26 : addf (AccMath.accVec (rowF fl tab (wL L).val (2 * t1.val) (2 * k.val)) (offF fl (wL L).val (2 * t1.val) (2 * k.val)) 3 26) (shapeCast S16 (pair0_last.sl.v2057_1 d L tab k r g1 g2 hR hin) hc16) = AccMath.accVec (rowF fl tab (wL L).val (2 * t1.val) (2 * k.val)) (offF fl (wL L).val (2 * t1.val) (2 * k.val)) 3 27 :=
      acc_step d L fl tab (wL L).val (2 * t1.val) (2 * k.val) 0 _ (hRA _) ⟨26, by decide⟩ ⟨3, by decide⟩ _ rfl _ hwA_26 _ (k1_off19_form ⟨1, by decide⟩ _ _) _ hc16
    have sA3_27 : addf (AccMath.accVec (rowF fl tab (wL L).val (2 * t1.val) (2 * k.val)) (offF fl (wL L).val (2 * t1.val) (2 * k.val)) 3 27) (shapeCast S16 (pair0_last.sl.v2093_1 d L tab k r g1 g2 hR hin) hc16) = AccMath.accVec (rowF fl tab (wL L).val (2 * t1.val) (2 * k.val)) (offF fl (wL L).val (2 * t1.val) (2 * k.val)) 3 28 :=
      acc_step d L fl tab (wL L).val (2 * t1.val) (2 * k.val) 0 _ (hRA _) ⟨27, by decide⟩ ⟨3, by decide⟩ _ rfl _ hwA_27 _ (k1_off20_form ⟨1, by decide⟩ _ _) _ hc16
    have sA3_28 : addf (AccMath.accVec (rowF fl tab (wL L).val (2 * t1.val) (2 * k.val)) (offF fl (wL L).val (2 * t1.val) (2 * k.val)) 3 28) (shapeCast S16 (pair0_last.sl.v2129_1 d L tab k r g1 g2 hR hin) hc16) = AccMath.accVec (rowF fl tab (wL L).val (2 * t1.val) (2 * k.val)) (offF fl (wL L).val (2 * t1.val) (2 * k.val)) 3 29 :=
      acc_step d L fl tab (wL L).val (2 * t1.val) (2 * k.val) 0 _ (hRA _) ⟨28, by decide⟩ ⟨3, by decide⟩ _ rfl _ hwA_28 _ (k1_off21_form ⟨1, by decide⟩ _ _) _ hc16
    have sA3_29 : addf (AccMath.accVec (rowF fl tab (wL L).val (2 * t1.val) (2 * k.val)) (offF fl (wL L).val (2 * t1.val) (2 * k.val)) 3 29) (shapeCast S16 (pair0_last.sl.v2165_1 d L tab k r g1 g2 hR hin) hc16) = AccMath.accVec (rowF fl tab (wL L).val (2 * t1.val) (2 * k.val)) (offF fl (wL L).val (2 * t1.val) (2 * k.val)) 3 30 :=
      acc_step d L fl tab (wL L).val (2 * t1.val) (2 * k.val) 0 _ (hRA _) ⟨29, by decide⟩ ⟨3, by decide⟩ _ rfl _ hwA_29 _ (k1_off22_form ⟨1, by decide⟩ _ _) _ hc16
    have sA3_30 : addf (AccMath.accVec (rowF fl tab (wL L).val (2 * t1.val) (2 * k.val)) (offF fl (wL L).val (2 * t1.val) (2 * k.val)) 3 30) (shapeCast S16 (pair0_last.sl.v2201_1 d L tab k r g1 g2 hR hin) hc16) = AccMath.accVec (rowF fl tab (wL L).val (2 * t1.val) (2 * k.val)) (offF fl (wL L).val (2 * t1.val) (2 * k.val)) 3 31 :=
      acc_step d L fl tab (wL L).val (2 * t1.val) (2 * k.val) 0 _ (hRA _) ⟨30, by decide⟩ ⟨3, by decide⟩ _ rfl _ hwA_30 _ (k1_off23_form ⟨1, by decide⟩ _ _) _ hc16
    have sA3_31 : addf (AccMath.accVec (rowF fl tab (wL L).val (2 * t1.val) (2 * k.val)) (offF fl (wL L).val (2 * t1.val) (2 * k.val)) 3 31) (shapeCast S16 (pair0_last.sl.v2237_1 d L tab k r g1 g2 hR hin) hc16) = AccMath.accVec (rowF fl tab (wL L).val (2 * t1.val) (2 * k.val)) (offF fl (wL L).val (2 * t1.val) (2 * k.val)) 3 32 :=
      acc_step d L fl tab (wL L).val (2 * t1.val) (2 * k.val) 0 _ (hRA _) ⟨31, by decide⟩ ⟨3, by decide⟩ _ rfl _ hwA_31 _ (k1_off24_form ⟨1, by decide⟩ _ _) _ hc16
    have sA3_32 : addf (AccMath.accVec (rowF fl tab (wL L).val (2 * t1.val) (2 * k.val)) (offF fl (wL L).val (2 * t1.val) (2 * k.val)) 3 32) (shapeCast S16 (pair0_last.sl.v1697_2 d L tab k r g1 g2 hR hin) hc16) = AccMath.accVec (rowF fl tab (wL L).val (2 * t1.val) (2 * k.val)) (offF fl (wL L).val (2 * t1.val) (2 * k.val)) 3 33 :=
      acc_step d L fl tab (wL L).val (2 * t1.val) (2 * k.val) 0 _ (hRA _) ⟨32, by decide⟩ ⟨3, by decide⟩ _ rfl _ hwA_32 _ (k1_off9_form ⟨2, by decide⟩ _ _) _ hc16
    have sA3_33 : addf (AccMath.accVec (rowF fl tab (wL L).val (2 * t1.val) (2 * k.val)) (offF fl (wL L).val (2 * t1.val) (2 * k.val)) 3 33) (shapeCast S16 (pair0_last.sl.v1733_2 d L tab k r g1 g2 hR hin) hc16) = AccMath.accVec (rowF fl tab (wL L).val (2 * t1.val) (2 * k.val)) (offF fl (wL L).val (2 * t1.val) (2 * k.val)) 3 34 :=
      acc_step d L fl tab (wL L).val (2 * t1.val) (2 * k.val) 0 _ (hRA _) ⟨33, by decide⟩ ⟨3, by decide⟩ _ rfl _ hwA_33 _ (k1_off10_form ⟨2, by decide⟩ _ _) _ hc16
    have sA3_34 : addf (AccMath.accVec (rowF fl tab (wL L).val (2 * t1.val) (2 * k.val)) (offF fl (wL L).val (2 * t1.val) (2 * k.val)) 3 34) (shapeCast S16 (pair0_last.sl.v1769_2 d L tab k r g1 g2 hR hin) hc16) = AccMath.accVec (rowF fl tab (wL L).val (2 * t1.val) (2 * k.val)) (offF fl (wL L).val (2 * t1.val) (2 * k.val)) 3 35 :=
      acc_step d L fl tab (wL L).val (2 * t1.val) (2 * k.val) 0 _ (hRA _) ⟨34, by decide⟩ ⟨3, by decide⟩ _ rfl _ hwA_34 _ (k1_off11_form ⟨2, by decide⟩ _ _) _ hc16
    have sA3_35 : addf (AccMath.accVec (rowF fl tab (wL L).val (2 * t1.val) (2 * k.val)) (offF fl (wL L).val (2 * t1.val) (2 * k.val)) 3 35) (shapeCast S16 (pair0_last.sl.v1805_2 d L tab k r g1 g2 hR hin) hc16) = AccMath.accVec (rowF fl tab (wL L).val (2 * t1.val) (2 * k.val)) (offF fl (wL L).val (2 * t1.val) (2 * k.val)) 3 36 :=
      acc_step d L fl tab (wL L).val (2 * t1.val) (2 * k.val) 0 _ (hRA _) ⟨35, by decide⟩ ⟨3, by decide⟩ _ rfl _ hwA_35 _ (k1_off12_form ⟨2, by decide⟩ _ _) _ hc16
    have sA3_36 : addf (AccMath.accVec (rowF fl tab (wL L).val (2 * t1.val) (2 * k.val)) (offF fl (wL L).val (2 * t1.val) (2 * k.val)) 3 36) (shapeCast S16 (pair0_last.sl.v1841_2 d L tab k r g1 g2 hR hin) hc16) = AccMath.accVec (rowF fl tab (wL L).val (2 * t1.val) (2 * k.val)) (offF fl (wL L).val (2 * t1.val) (2 * k.val)) 3 37 :=
      acc_step d L fl tab (wL L).val (2 * t1.val) (2 * k.val) 0 _ (hRA _) ⟨36, by decide⟩ ⟨3, by decide⟩ _ rfl _ hwA_36 _ (k1_off13_form ⟨2, by decide⟩ _ _) _ hc16
    have sA3_37 : addf (AccMath.accVec (rowF fl tab (wL L).val (2 * t1.val) (2 * k.val)) (offF fl (wL L).val (2 * t1.val) (2 * k.val)) 3 37) (shapeCast S16 (pair0_last.sl.v1877_2 d L tab k r g1 g2 hR hin) hc16) = AccMath.accVec (rowF fl tab (wL L).val (2 * t1.val) (2 * k.val)) (offF fl (wL L).val (2 * t1.val) (2 * k.val)) 3 38 :=
      acc_step d L fl tab (wL L).val (2 * t1.val) (2 * k.val) 0 _ (hRA _) ⟨37, by decide⟩ ⟨3, by decide⟩ _ rfl _ hwA_37 _ (k1_off14_form ⟨2, by decide⟩ _ _) _ hc16
    have sA3_38 : addf (AccMath.accVec (rowF fl tab (wL L).val (2 * t1.val) (2 * k.val)) (offF fl (wL L).val (2 * t1.val) (2 * k.val)) 3 38) (shapeCast S16 (pair0_last.sl.v1913_2 d L tab k r g1 g2 hR hin) hc16) = AccMath.accVec (rowF fl tab (wL L).val (2 * t1.val) (2 * k.val)) (offF fl (wL L).val (2 * t1.val) (2 * k.val)) 3 39 :=
      acc_step d L fl tab (wL L).val (2 * t1.val) (2 * k.val) 0 _ (hRA _) ⟨38, by decide⟩ ⟨3, by decide⟩ _ rfl _ hwA_38 _ (k1_off15_form ⟨2, by decide⟩ _ _) _ hc16
    have sA3_39 : addf (AccMath.accVec (rowF fl tab (wL L).val (2 * t1.val) (2 * k.val)) (offF fl (wL L).val (2 * t1.val) (2 * k.val)) 3 39) (shapeCast S16 (pair0_last.sl.v1949_2 d L tab k r g1 g2 hR hin) hc16) = AccMath.accVec (rowF fl tab (wL L).val (2 * t1.val) (2 * k.val)) (offF fl (wL L).val (2 * t1.val) (2 * k.val)) 3 40 :=
      acc_step d L fl tab (wL L).val (2 * t1.val) (2 * k.val) 0 _ (hRA _) ⟨39, by decide⟩ ⟨3, by decide⟩ _ rfl _ hwA_39 _ (k1_off16_form ⟨2, by decide⟩ _ _) _ hc16
    have sA3_40 : addf (AccMath.accVec (rowF fl tab (wL L).val (2 * t1.val) (2 * k.val)) (offF fl (wL L).val (2 * t1.val) (2 * k.val)) 3 40) (shapeCast S16 (pair0_last.sl.v1985_2 d L tab k r g1 g2 hR hin) hc16) = AccMath.accVec (rowF fl tab (wL L).val (2 * t1.val) (2 * k.val)) (offF fl (wL L).val (2 * t1.val) (2 * k.val)) 3 41 :=
      acc_step d L fl tab (wL L).val (2 * t1.val) (2 * k.val) 0 _ (hRA _) ⟨40, by decide⟩ ⟨3, by decide⟩ _ rfl _ hwA_40 _ (k1_off17_form ⟨2, by decide⟩ _ _) _ hc16
    have sA3_41 : addf (AccMath.accVec (rowF fl tab (wL L).val (2 * t1.val) (2 * k.val)) (offF fl (wL L).val (2 * t1.val) (2 * k.val)) 3 41) (shapeCast S16 (pair0_last.sl.v2021_2 d L tab k r g1 g2 hR hin) hc16) = AccMath.accVec (rowF fl tab (wL L).val (2 * t1.val) (2 * k.val)) (offF fl (wL L).val (2 * t1.val) (2 * k.val)) 3 42 :=
      acc_step d L fl tab (wL L).val (2 * t1.val) (2 * k.val) 0 _ (hRA _) ⟨41, by decide⟩ ⟨3, by decide⟩ _ rfl _ hwA_41 _ (k1_off18_form ⟨2, by decide⟩ _ _) _ hc16
    have sA3_42 : addf (AccMath.accVec (rowF fl tab (wL L).val (2 * t1.val) (2 * k.val)) (offF fl (wL L).val (2 * t1.val) (2 * k.val)) 3 42) (shapeCast S16 (pair0_last.sl.v2057_2 d L tab k r g1 g2 hR hin) hc16) = AccMath.accVec (rowF fl tab (wL L).val (2 * t1.val) (2 * k.val)) (offF fl (wL L).val (2 * t1.val) (2 * k.val)) 3 43 :=
      acc_step d L fl tab (wL L).val (2 * t1.val) (2 * k.val) 0 _ (hRA _) ⟨42, by decide⟩ ⟨3, by decide⟩ _ rfl _ hwA_42 _ (k1_off19_form ⟨2, by decide⟩ _ _) _ hc16
    have sA3_43 : addf (AccMath.accVec (rowF fl tab (wL L).val (2 * t1.val) (2 * k.val)) (offF fl (wL L).val (2 * t1.val) (2 * k.val)) 3 43) (shapeCast S16 (pair0_last.sl.v2093_2 d L tab k r g1 g2 hR hin) hc16) = AccMath.accVec (rowF fl tab (wL L).val (2 * t1.val) (2 * k.val)) (offF fl (wL L).val (2 * t1.val) (2 * k.val)) 3 44 :=
      acc_step d L fl tab (wL L).val (2 * t1.val) (2 * k.val) 0 _ (hRA _) ⟨43, by decide⟩ ⟨3, by decide⟩ _ rfl _ hwA_43 _ (k1_off20_form ⟨2, by decide⟩ _ _) _ hc16
    have sA3_44 : addf (AccMath.accVec (rowF fl tab (wL L).val (2 * t1.val) (2 * k.val)) (offF fl (wL L).val (2 * t1.val) (2 * k.val)) 3 44) (shapeCast S16 (pair0_last.sl.v2129_2 d L tab k r g1 g2 hR hin) hc16) = AccMath.accVec (rowF fl tab (wL L).val (2 * t1.val) (2 * k.val)) (offF fl (wL L).val (2 * t1.val) (2 * k.val)) 3 45 :=
      acc_step d L fl tab (wL L).val (2 * t1.val) (2 * k.val) 0 _ (hRA _) ⟨44, by decide⟩ ⟨3, by decide⟩ _ rfl _ hwA_44 _ (k1_off21_form ⟨2, by decide⟩ _ _) _ hc16
    have sA3_45 : addf (AccMath.accVec (rowF fl tab (wL L).val (2 * t1.val) (2 * k.val)) (offF fl (wL L).val (2 * t1.val) (2 * k.val)) 3 45) (shapeCast S16 (pair0_last.sl.v2165_2 d L tab k r g1 g2 hR hin) hc16) = AccMath.accVec (rowF fl tab (wL L).val (2 * t1.val) (2 * k.val)) (offF fl (wL L).val (2 * t1.val) (2 * k.val)) 3 46 :=
      acc_step d L fl tab (wL L).val (2 * t1.val) (2 * k.val) 0 _ (hRA _) ⟨45, by decide⟩ ⟨3, by decide⟩ _ rfl _ hwA_45 _ (k1_off22_form ⟨2, by decide⟩ _ _) _ hc16
    have sA3_46 : addf (AccMath.accVec (rowF fl tab (wL L).val (2 * t1.val) (2 * k.val)) (offF fl (wL L).val (2 * t1.val) (2 * k.val)) 3 46) (shapeCast S16 (pair0_last.sl.v2201_2 d L tab k r g1 g2 hR hin) hc16) = AccMath.accVec (rowF fl tab (wL L).val (2 * t1.val) (2 * k.val)) (offF fl (wL L).val (2 * t1.val) (2 * k.val)) 3 47 :=
      acc_step d L fl tab (wL L).val (2 * t1.val) (2 * k.val) 0 _ (hRA _) ⟨46, by decide⟩ ⟨3, by decide⟩ _ rfl _ hwA_46 _ (k1_off23_form ⟨2, by decide⟩ _ _) _ hc16
    have sA3_47 : addf (AccMath.accVec (rowF fl tab (wL L).val (2 * t1.val) (2 * k.val)) (offF fl (wL L).val (2 * t1.val) (2 * k.val)) 3 47) (shapeCast S16 (pair0_last.sl.v2237_2 d L tab k r g1 g2 hR hin) hc16) = AccMath.accVec (rowF fl tab (wL L).val (2 * t1.val) (2 * k.val)) (offF fl (wL L).val (2 * t1.val) (2 * k.val)) 3 48 :=
      acc_step d L fl tab (wL L).val (2 * t1.val) (2 * k.val) 0 _ (hRA _) ⟨47, by decide⟩ ⟨3, by decide⟩ _ rfl _ hwA_47 _ (k1_off24_form ⟨2, by decide⟩ _ _) _ hc16
    have sA3_48 : addf (AccMath.accVec (rowF fl tab (wL L).val (2 * t1.val) (2 * k.val)) (offF fl (wL L).val (2 * t1.val) (2 * k.val)) 3 48) (shapeCast S16 (pair0_last.sl.v1486 d L tab k r g1 g2 hR hin) hc16) = AccMath.accVec (rowF fl tab (wL L).val (2 * t1.val) (2 * k.val)) (offF fl (wL L).val (2 * t1.val) (2 * k.val)) 3 49 :=
      acc_step d L fl tab (wL L).val (2 * t1.val) (2 * k.val) 0 _ (hRA _) ⟨48, by decide⟩ ⟨3, by decide⟩ _ rfl _ hwA_48 _ (k1_off26_form _ _) _ hc16
    have sA3_49 : addf (AccMath.accVec (rowF fl tab (wL L).val (2 * t1.val) (2 * k.val)) (offF fl (wL L).val (2 * t1.val) (2 * k.val)) 3 49) (shapeCast S16 (pair0_last.sl.v1520 d L tab k r g1 g2 hR hin) hc16) = AccMath.accVec (rowF fl tab (wL L).val (2 * t1.val) (2 * k.val)) (offF fl (wL L).val (2 * t1.val) (2 * k.val)) 3 50 :=
      acc_step d L fl tab (wL L).val (2 * t1.val) (2 * k.val) 0 _ (hRA _) ⟨49, by decide⟩ ⟨3, by decide⟩ _ rfl _ hwA_49 _ (k1_off27_form _ _) _ hc16
    have hPA3 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val)) (offF fl (wL L).val (2 * t1.val) (2 * k.val)) 3 0) (shapeCast S16 (pair0_last.sl.v1697 d L tab k r g1 g2 hR hin) hc16)) (shapeCast S16 (pair0_last.sl.v1733 d L tab k r g1 g2 hR hin) hc16)) (shapeCast S16 (pair0_last.sl.v1769 d L tab k r g1 g2 hR hin) hc16)) (shapeCast S16 (pair0_last.sl.v1805 d L tab k r g1 g2 hR hin) hc16)) (shapeCast S16 (pair0_last.sl.v1841 d L tab k r g1 g2 hR hin) hc16)) (shapeCast S16 (pair0_last.sl.v1877 d L tab k r g1 g2 hR hin) hc16)) (shapeCast S16 (pair0_last.sl.v1913 d L tab k r g1 g2 hR hin) hc16)) (shapeCast S16 (pair0_last.sl.v1949 d L tab k r g1 g2 hR hin) hc16)) (shapeCast S16 (pair0_last.sl.v1985 d L tab k r g1 g2 hR hin) hc16)) (shapeCast S16 (pair0_last.sl.v2021 d L tab k r g1 g2 hR hin) hc16)) (shapeCast S16 (pair0_last.sl.v2057 d L tab k r g1 g2 hR hin) hc16)) (shapeCast S16 (pair0_last.sl.v2093 d L tab k r g1 g2 hR hin) hc16)) (shapeCast S16 (pair0_last.sl.v2129 d L tab k r g1 g2 hR hin) hc16)) (shapeCast S16 (pair0_last.sl.v2165 d L tab k r g1 g2 hR hin) hc16)) (shapeCast S16 (pair0_last.sl.v2201 d L tab k r g1 g2 hR hin) hc16)) (shapeCast S16 (pair0_last.sl.v2237 d L tab k r g1 g2 hR hin) hc16)) (shapeCast S16 (pair0_last.sl.v1697_1 d L tab k r g1 g2 hR hin) hc16)) (shapeCast S16 (pair0_last.sl.v1733_1 d L tab k r g1 g2 hR hin) hc16)) (shapeCast S16 (pair0_last.sl.v1769_1 d L tab k r g1 g2 hR hin) hc16)) (shapeCast S16 (pair0_last.sl.v1805_1 d L tab k r g1 g2 hR hin) hc16)) (shapeCast S16 (pair0_last.sl.v1841_1 d L tab k r g1 g2 hR hin) hc16)) (shapeCast S16 (pair0_last.sl.v1877_1 d L tab k r g1 g2 hR hin) hc16)) (shapeCast S16 (pair0_last.sl.v1913_1 d L tab k r g1 g2 hR hin) hc16)) (shapeCast S16 (pair0_last.sl.v1949_1 d L tab k r g1 g2 hR hin) hc16)) (shapeCast S16 (pair0_last.sl.v1985_1 d L tab k r g1 g2 hR hin) hc16)) (shapeCast S16 (pair0_last.sl.v2021_1 d L tab k r g1 g2 hR hin) hc16)) (shapeCast S16 (pair0_last.sl.v2057_1 d L tab k r g1 g2 hR hin) hc16)) (shapeCast S16 (pair0_last.sl.v2093_1 d L tab k r g1 g2 hR hin) hc16)) (shapeCast S16 (pair0_last.sl.v2129_1 d L tab k r g1 g2 hR hin) hc16)) (shapeCast S16 (pair0_last.sl.v2165_1 d L tab k r g1 g2 hR hin) hc16)) (shapeCast S16 (pair0_last.sl.v2201_1 d L tab k r g1 g2 hR hin) hc16)) (shapeCast S16 (pair0_last.sl.v2237_1 d L tab k r g1 g2 hR hin) hc16)) (shapeCast S16 (pair0_last.sl.v1697_2 d L tab k r g1 g2 hR hin) hc16)) (shapeCast S16 (pair0_last.sl.v1733_2 d L tab k r g1 g2 hR hin) hc16)) (shapeCast S16 (pair0_last.sl.v1769_2 d L tab k r g1 g2 hR hin) hc16)) (shapeCast S16 (pair0_last.sl.v1805_2 d L tab k r g1 g2 hR hin) hc16)) (shapeCast S16 (pair0_last.sl.v1841_2 d L tab k r g1 g2 hR hin) hc16)) (shapeCast S16 (pair0_last.sl.v1877_2 d L tab k r g1 g2 hR hin) hc16)) (shapeCast S16 (pair0_last.sl.v1913_2 d L tab k r g1 g2 hR hin) hc16)) (shapeCast S16 (pair0_last.sl.v1949_2 d L tab k r g1 g2 hR hin) hc16)) (shapeCast S16 (pair0_last.sl.v1985_2 d L tab k r g1 g2 hR hin) hc16)) (shapeCast S16 (pair0_last.sl.v2021_2 d L tab k r g1 g2 hR hin) hc16)) (shapeCast S16 (pair0_last.sl.v2057_2 d L tab k r g1 g2 hR hin) hc16)) (shapeCast S16 (pair0_last.sl.v2093_2 d L tab k r g1 g2 hR hin) hc16)) (shapeCast S16 (pair0_last.sl.v2129_2 d L tab k r g1 g2 hR hin) hc16)) (shapeCast S16 (pair0_last.sl.v2165_2 d L tab k r g1 g2 hR hin) hc16)) (shapeCast S16 (pair0_last.sl.v2201_2 d L tab k r g1 g2 hR hin) hc16)) (shapeCast S16 (pair0_last.sl.v2237_2 d L tab k r g1 g2 hR hin) hc16)) (shapeCast S16 (pair0_last.sl.v1486 d L tab k r g1 g2 hR hin) hc16)) (shapeCast S16 (pair0_last.sl.v1520 d L tab k r g1 g2 hR hin) hc16)) hc1 x = Spec.bagPartial fl tab (128 * (wL L).val + 16 * (2 * t1.val) + (2 * k.val)) (16 * 3 + (x 2).val) 50 := fun x => by
      rw [sA3_0, sA3_1, sA3_2, sA3_3, sA3_4, sA3_5, sA3_6, sA3_7, sA3_8, sA3_9, sA3_10, sA3_11, sA3_12, sA3_13, sA3_14, sA3_15, sA3_16, sA3_17, sA3_18, sA3_19, sA3_20, sA3_21, sA3_22, sA3_23, sA3_24, sA3_25, sA3_26, sA3_27, sA3_28, sA3_29, sA3_30, sA3_31, sA3_32, sA3_33, sA3_34, sA3_35, sA3_36, sA3_37, sA3_38, sA3_39, sA3_40, sA3_41, sA3_42, sA3_43, sA3_44, sA3_45, sA3_46, sA3_47, sA3_48, sA3_49]; exact payload_ok fl tab (wL L).val (2 * t1.val) (2 * k.val) ⟨3, by decide⟩ hc1 x
    have hwB_0 : pair0_last.sl.v1667_3 d L k g2 = Spec.tcol (blkWord fl (wL L).val (2 * t1.val) (64 * (2 * k.val + 1) + 0)) := by
      refine (rv_extract d L g2 (k1_off35 k ⟨0, by decide⟩) (k1_off35_inb k ⟨0, by decide⟩) (by decide) 0 (by decide) (by decide) (by decide)).trans ?_
      exact rv_word d L fl (wL L).val (2 * t1.val) 0 (2 * k.val + 1) 0 (by decide) (by omega) (by decide) g2 hV0 _
        (by rw [k1_off35_eq k ⟨0, by decide⟩]; show 128 * k.val + 16 * 0 + 64 + 0 = 1024 * 0 + 64 * (2 * k.val + 1) + 0; omega) _
    have hwB_1 : pair0_last.sl.v1703_3 d L k g2 = Spec.tcol (blkWord fl (wL L).val (2 * t1.val) (64 * (2 * k.val + 1) + 1)) := by
      refine (rv_extract d L g2 (k1_off35 k ⟨0, by decide⟩) (k1_off35_inb k ⟨0, by decide⟩) (by decide) 1 (by decide) (by decide) (by decide)).trans ?_
      exact rv_word d L fl (wL L).val (2 * t1.val) 0 (2 * k.val + 1) 1 (by decide) (by omega) (by decide) g2 hV0 _
        (by rw [k1_off35_eq k ⟨0, by decide⟩]; show 128 * k.val + 16 * 0 + 64 + 1 = 1024 * 0 + 64 * (2 * k.val + 1) + 1; omega) _
    have hwB_2 : pair0_last.sl.v1739_3 d L k g2 = Spec.tcol (blkWord fl (wL L).val (2 * t1.val) (64 * (2 * k.val + 1) + 2)) := by
      refine (rv_extract d L g2 (k1_off35 k ⟨0, by decide⟩) (k1_off35_inb k ⟨0, by decide⟩) (by decide) 2 (by decide) (by decide) (by decide)).trans ?_
      exact rv_word d L fl (wL L).val (2 * t1.val) 0 (2 * k.val + 1) 2 (by decide) (by omega) (by decide) g2 hV0 _
        (by rw [k1_off35_eq k ⟨0, by decide⟩]; show 128 * k.val + 16 * 0 + 64 + 2 = 1024 * 0 + 64 * (2 * k.val + 1) + 2; omega) _
    have hwB_3 : pair0_last.sl.v1775_3 d L k g2 = Spec.tcol (blkWord fl (wL L).val (2 * t1.val) (64 * (2 * k.val + 1) + 3)) := by
      refine (rv_extract d L g2 (k1_off35 k ⟨0, by decide⟩) (k1_off35_inb k ⟨0, by decide⟩) (by decide) 3 (by decide) (by decide) (by decide)).trans ?_
      exact rv_word d L fl (wL L).val (2 * t1.val) 0 (2 * k.val + 1) 3 (by decide) (by omega) (by decide) g2 hV0 _
        (by rw [k1_off35_eq k ⟨0, by decide⟩]; show 128 * k.val + 16 * 0 + 64 + 3 = 1024 * 0 + 64 * (2 * k.val + 1) + 3; omega) _
    have hwB_4 : pair0_last.sl.v1811_3 d L k g2 = Spec.tcol (blkWord fl (wL L).val (2 * t1.val) (64 * (2 * k.val + 1) + 4)) := by
      refine (rv_extract d L g2 (k1_off35 k ⟨0, by decide⟩) (k1_off35_inb k ⟨0, by decide⟩) (by decide) 4 (by decide) (by decide) (by decide)).trans ?_
      exact rv_word d L fl (wL L).val (2 * t1.val) 0 (2 * k.val + 1) 4 (by decide) (by omega) (by decide) g2 hV0 _
        (by rw [k1_off35_eq k ⟨0, by decide⟩]; show 128 * k.val + 16 * 0 + 64 + 4 = 1024 * 0 + 64 * (2 * k.val + 1) + 4; omega) _
    have hwB_5 : pair0_last.sl.v1847_3 d L k g2 = Spec.tcol (blkWord fl (wL L).val (2 * t1.val) (64 * (2 * k.val + 1) + 5)) := by
      refine (rv_extract d L g2 (k1_off35 k ⟨0, by decide⟩) (k1_off35_inb k ⟨0, by decide⟩) (by decide) 5 (by decide) (by decide) (by decide)).trans ?_
      exact rv_word d L fl (wL L).val (2 * t1.val) 0 (2 * k.val + 1) 5 (by decide) (by omega) (by decide) g2 hV0 _
        (by rw [k1_off35_eq k ⟨0, by decide⟩]; show 128 * k.val + 16 * 0 + 64 + 5 = 1024 * 0 + 64 * (2 * k.val + 1) + 5; omega) _
    have hwB_6 : pair0_last.sl.v1883_3 d L k g2 = Spec.tcol (blkWord fl (wL L).val (2 * t1.val) (64 * (2 * k.val + 1) + 6)) := by
      refine (rv_extract d L g2 (k1_off35 k ⟨0, by decide⟩) (k1_off35_inb k ⟨0, by decide⟩) (by decide) 6 (by decide) (by decide) (by decide)).trans ?_
      exact rv_word d L fl (wL L).val (2 * t1.val) 0 (2 * k.val + 1) 6 (by decide) (by omega) (by decide) g2 hV0 _
        (by rw [k1_off35_eq k ⟨0, by decide⟩]; show 128 * k.val + 16 * 0 + 64 + 6 = 1024 * 0 + 64 * (2 * k.val + 1) + 6; omega) _
    have hwB_7 : pair0_last.sl.v1919_3 d L k g2 = Spec.tcol (blkWord fl (wL L).val (2 * t1.val) (64 * (2 * k.val + 1) + 7)) := by
      refine (rv_extract d L g2 (k1_off35 k ⟨0, by decide⟩) (k1_off35_inb k ⟨0, by decide⟩) (by decide) 7 (by decide) (by decide) (by decide)).trans ?_
      exact rv_word d L fl (wL L).val (2 * t1.val) 0 (2 * k.val + 1) 7 (by decide) (by omega) (by decide) g2 hV0 _
        (by rw [k1_off35_eq k ⟨0, by decide⟩]; show 128 * k.val + 16 * 0 + 64 + 7 = 1024 * 0 + 64 * (2 * k.val + 1) + 7; omega) _
    have hwB_8 : pair0_last.sl.v1955_3 d L k g2 = Spec.tcol (blkWord fl (wL L).val (2 * t1.val) (64 * (2 * k.val + 1) + 8)) := by
      refine (rv_extract d L g2 (k1_off35 k ⟨0, by decide⟩) (k1_off35_inb k ⟨0, by decide⟩) (by decide) 8 (by decide) (by decide) (by decide)).trans ?_
      exact rv_word d L fl (wL L).val (2 * t1.val) 0 (2 * k.val + 1) 8 (by decide) (by omega) (by decide) g2 hV0 _
        (by rw [k1_off35_eq k ⟨0, by decide⟩]; show 128 * k.val + 16 * 0 + 64 + 8 = 1024 * 0 + 64 * (2 * k.val + 1) + 8; omega) _
    have hwB_9 : pair0_last.sl.v1991_3 d L k g2 = Spec.tcol (blkWord fl (wL L).val (2 * t1.val) (64 * (2 * k.val + 1) + 9)) := by
      refine (rv_extract d L g2 (k1_off35 k ⟨0, by decide⟩) (k1_off35_inb k ⟨0, by decide⟩) (by decide) 9 (by decide) (by decide) (by decide)).trans ?_
      exact rv_word d L fl (wL L).val (2 * t1.val) 0 (2 * k.val + 1) 9 (by decide) (by omega) (by decide) g2 hV0 _
        (by rw [k1_off35_eq k ⟨0, by decide⟩]; show 128 * k.val + 16 * 0 + 64 + 9 = 1024 * 0 + 64 * (2 * k.val + 1) + 9; omega) _
    have hwB_10 : pair0_last.sl.v2027_3 d L k g2 = Spec.tcol (blkWord fl (wL L).val (2 * t1.val) (64 * (2 * k.val + 1) + 10)) := by
      refine (rv_extract d L g2 (k1_off35 k ⟨0, by decide⟩) (k1_off35_inb k ⟨0, by decide⟩) (by decide) 10 (by decide) (by decide) (by decide)).trans ?_
      exact rv_word d L fl (wL L).val (2 * t1.val) 0 (2 * k.val + 1) 10 (by decide) (by omega) (by decide) g2 hV0 _
        (by rw [k1_off35_eq k ⟨0, by decide⟩]; show 128 * k.val + 16 * 0 + 64 + 10 = 1024 * 0 + 64 * (2 * k.val + 1) + 10; omega) _
    have hwB_11 : pair0_last.sl.v2063_3 d L k g2 = Spec.tcol (blkWord fl (wL L).val (2 * t1.val) (64 * (2 * k.val + 1) + 11)) := by
      refine (rv_extract d L g2 (k1_off35 k ⟨0, by decide⟩) (k1_off35_inb k ⟨0, by decide⟩) (by decide) 11 (by decide) (by decide) (by decide)).trans ?_
      exact rv_word d L fl (wL L).val (2 * t1.val) 0 (2 * k.val + 1) 11 (by decide) (by omega) (by decide) g2 hV0 _
        (by rw [k1_off35_eq k ⟨0, by decide⟩]; show 128 * k.val + 16 * 0 + 64 + 11 = 1024 * 0 + 64 * (2 * k.val + 1) + 11; omega) _
    have hwB_12 : pair0_last.sl.v2099_3 d L k g2 = Spec.tcol (blkWord fl (wL L).val (2 * t1.val) (64 * (2 * k.val + 1) + 12)) := by
      refine (rv_extract d L g2 (k1_off35 k ⟨0, by decide⟩) (k1_off35_inb k ⟨0, by decide⟩) (by decide) 12 (by decide) (by decide) (by decide)).trans ?_
      exact rv_word d L fl (wL L).val (2 * t1.val) 0 (2 * k.val + 1) 12 (by decide) (by omega) (by decide) g2 hV0 _
        (by rw [k1_off35_eq k ⟨0, by decide⟩]; show 128 * k.val + 16 * 0 + 64 + 12 = 1024 * 0 + 64 * (2 * k.val + 1) + 12; omega) _
    have hwB_13 : pair0_last.sl.v2135_3 d L k g2 = Spec.tcol (blkWord fl (wL L).val (2 * t1.val) (64 * (2 * k.val + 1) + 13)) := by
      refine (rv_extract d L g2 (k1_off35 k ⟨0, by decide⟩) (k1_off35_inb k ⟨0, by decide⟩) (by decide) 13 (by decide) (by decide) (by decide)).trans ?_
      exact rv_word d L fl (wL L).val (2 * t1.val) 0 (2 * k.val + 1) 13 (by decide) (by omega) (by decide) g2 hV0 _
        (by rw [k1_off35_eq k ⟨0, by decide⟩]; show 128 * k.val + 16 * 0 + 64 + 13 = 1024 * 0 + 64 * (2 * k.val + 1) + 13; omega) _
    have hwB_14 : pair0_last.sl.v2171_3 d L k g2 = Spec.tcol (blkWord fl (wL L).val (2 * t1.val) (64 * (2 * k.val + 1) + 14)) := by
      refine (rv_extract d L g2 (k1_off35 k ⟨0, by decide⟩) (k1_off35_inb k ⟨0, by decide⟩) (by decide) 14 (by decide) (by decide) (by decide)).trans ?_
      exact rv_word d L fl (wL L).val (2 * t1.val) 0 (2 * k.val + 1) 14 (by decide) (by omega) (by decide) g2 hV0 _
        (by rw [k1_off35_eq k ⟨0, by decide⟩]; show 128 * k.val + 16 * 0 + 64 + 14 = 1024 * 0 + 64 * (2 * k.val + 1) + 14; omega) _
    have hwB_15 : pair0_last.sl.v2207_3 d L k g2 = Spec.tcol (blkWord fl (wL L).val (2 * t1.val) (64 * (2 * k.val + 1) + 15)) := by
      refine (rv_extract d L g2 (k1_off35 k ⟨0, by decide⟩) (k1_off35_inb k ⟨0, by decide⟩) (by decide) 15 (by decide) (by decide) (by decide)).trans ?_
      exact rv_word d L fl (wL L).val (2 * t1.val) 0 (2 * k.val + 1) 15 (by decide) (by omega) (by decide) g2 hV0 _
        (by rw [k1_off35_eq k ⟨0, by decide⟩]; show 128 * k.val + 16 * 0 + 64 + 15 = 1024 * 0 + 64 * (2 * k.val + 1) + 15; omega) _
    have hwB_16 : pair0_last.sl.v1667_4 d L k g2 = Spec.tcol (blkWord fl (wL L).val (2 * t1.val) (64 * (2 * k.val + 1) + 16)) := by
      refine (rv_extract d L g2 (k1_off35 k ⟨1, by decide⟩) (k1_off35_inb k ⟨1, by decide⟩) (by decide) 0 (by decide) (by decide) (by decide)).trans ?_
      exact rv_word d L fl (wL L).val (2 * t1.val) 0 (2 * k.val + 1) 16 (by decide) (by omega) (by decide) g2 hV0 _
        (by rw [k1_off35_eq k ⟨1, by decide⟩]; show 128 * k.val + 16 * 1 + 64 + 0 = 1024 * 0 + 64 * (2 * k.val + 1) + 16; omega) _
    have hwB_17 : pair0_last.sl.v1703_4 d L k g2 = Spec.tcol (blkWord fl (wL L).val (2 * t1.val) (64 * (2 * k.val + 1) + 17)) := by
      refine (rv_extract d L g2 (k1_off35 k ⟨1, by decide⟩) (k1_off35_inb k ⟨1, by decide⟩) (by decide) 1 (by decide) (by decide) (by decide)).trans ?_
      exact rv_word d L fl (wL L).val (2 * t1.val) 0 (2 * k.val + 1) 17 (by decide) (by omega) (by decide) g2 hV0 _
        (by rw [k1_off35_eq k ⟨1, by decide⟩]; show 128 * k.val + 16 * 1 + 64 + 1 = 1024 * 0 + 64 * (2 * k.val + 1) + 17; omega) _
    have hwB_18 : pair0_last.sl.v1739_4 d L k g2 = Spec.tcol (blkWord fl (wL L).val (2 * t1.val) (64 * (2 * k.val + 1) + 18)) := by
      refine (rv_extract d L g2 (k1_off35 k ⟨1, by decide⟩) (k1_off35_inb k ⟨1, by decide⟩) (by decide) 2 (by decide) (by decide) (by decide)).trans ?_
      exact rv_word d L fl (wL L).val (2 * t1.val) 0 (2 * k.val + 1) 18 (by decide) (by omega) (by decide) g2 hV0 _
        (by rw [k1_off35_eq k ⟨1, by decide⟩]; show 128 * k.val + 16 * 1 + 64 + 2 = 1024 * 0 + 64 * (2 * k.val + 1) + 18; omega) _
    have hwB_19 : pair0_last.sl.v1775_4 d L k g2 = Spec.tcol (blkWord fl (wL L).val (2 * t1.val) (64 * (2 * k.val + 1) + 19)) := by
      refine (rv_extract d L g2 (k1_off35 k ⟨1, by decide⟩) (k1_off35_inb k ⟨1, by decide⟩) (by decide) 3 (by decide) (by decide) (by decide)).trans ?_
      exact rv_word d L fl (wL L).val (2 * t1.val) 0 (2 * k.val + 1) 19 (by decide) (by omega) (by decide) g2 hV0 _
        (by rw [k1_off35_eq k ⟨1, by decide⟩]; show 128 * k.val + 16 * 1 + 64 + 3 = 1024 * 0 + 64 * (2 * k.val + 1) + 19; omega) _
    have hwB_20 : pair0_last.sl.v1811_4 d L k g2 = Spec.tcol (blkWord fl (wL L).val (2 * t1.val) (64 * (2 * k.val + 1) + 20)) := by
      refine (rv_extract d L g2 (k1_off35 k ⟨1, by decide⟩) (k1_off35_inb k ⟨1, by decide⟩) (by decide) 4 (by decide) (by decide) (by decide)).trans ?_
      exact rv_word d L fl (wL L).val (2 * t1.val) 0 (2 * k.val + 1) 20 (by decide) (by omega) (by decide) g2 hV0 _
        (by rw [k1_off35_eq k ⟨1, by decide⟩]; show 128 * k.val + 16 * 1 + 64 + 4 = 1024 * 0 + 64 * (2 * k.val + 1) + 20; omega) _
    have hwB_21 : pair0_last.sl.v1847_4 d L k g2 = Spec.tcol (blkWord fl (wL L).val (2 * t1.val) (64 * (2 * k.val + 1) + 21)) := by
      refine (rv_extract d L g2 (k1_off35 k ⟨1, by decide⟩) (k1_off35_inb k ⟨1, by decide⟩) (by decide) 5 (by decide) (by decide) (by decide)).trans ?_
      exact rv_word d L fl (wL L).val (2 * t1.val) 0 (2 * k.val + 1) 21 (by decide) (by omega) (by decide) g2 hV0 _
        (by rw [k1_off35_eq k ⟨1, by decide⟩]; show 128 * k.val + 16 * 1 + 64 + 5 = 1024 * 0 + 64 * (2 * k.val + 1) + 21; omega) _
    have hwB_22 : pair0_last.sl.v1883_4 d L k g2 = Spec.tcol (blkWord fl (wL L).val (2 * t1.val) (64 * (2 * k.val + 1) + 22)) := by
      refine (rv_extract d L g2 (k1_off35 k ⟨1, by decide⟩) (k1_off35_inb k ⟨1, by decide⟩) (by decide) 6 (by decide) (by decide) (by decide)).trans ?_
      exact rv_word d L fl (wL L).val (2 * t1.val) 0 (2 * k.val + 1) 22 (by decide) (by omega) (by decide) g2 hV0 _
        (by rw [k1_off35_eq k ⟨1, by decide⟩]; show 128 * k.val + 16 * 1 + 64 + 6 = 1024 * 0 + 64 * (2 * k.val + 1) + 22; omega) _
    have hwB_23 : pair0_last.sl.v1919_4 d L k g2 = Spec.tcol (blkWord fl (wL L).val (2 * t1.val) (64 * (2 * k.val + 1) + 23)) := by
      refine (rv_extract d L g2 (k1_off35 k ⟨1, by decide⟩) (k1_off35_inb k ⟨1, by decide⟩) (by decide) 7 (by decide) (by decide) (by decide)).trans ?_
      exact rv_word d L fl (wL L).val (2 * t1.val) 0 (2 * k.val + 1) 23 (by decide) (by omega) (by decide) g2 hV0 _
        (by rw [k1_off35_eq k ⟨1, by decide⟩]; show 128 * k.val + 16 * 1 + 64 + 7 = 1024 * 0 + 64 * (2 * k.val + 1) + 23; omega) _
    have hwB_24 : pair0_last.sl.v1955_4 d L k g2 = Spec.tcol (blkWord fl (wL L).val (2 * t1.val) (64 * (2 * k.val + 1) + 24)) := by
      refine (rv_extract d L g2 (k1_off35 k ⟨1, by decide⟩) (k1_off35_inb k ⟨1, by decide⟩) (by decide) 8 (by decide) (by decide) (by decide)).trans ?_
      exact rv_word d L fl (wL L).val (2 * t1.val) 0 (2 * k.val + 1) 24 (by decide) (by omega) (by decide) g2 hV0 _
        (by rw [k1_off35_eq k ⟨1, by decide⟩]; show 128 * k.val + 16 * 1 + 64 + 8 = 1024 * 0 + 64 * (2 * k.val + 1) + 24; omega) _
    have hwB_25 : pair0_last.sl.v1991_4 d L k g2 = Spec.tcol (blkWord fl (wL L).val (2 * t1.val) (64 * (2 * k.val + 1) + 25)) := by
      refine (rv_extract d L g2 (k1_off35 k ⟨1, by decide⟩) (k1_off35_inb k ⟨1, by decide⟩) (by decide) 9 (by decide) (by decide) (by decide)).trans ?_
      exact rv_word d L fl (wL L).val (2 * t1.val) 0 (2 * k.val + 1) 25 (by decide) (by omega) (by decide) g2 hV0 _
        (by rw [k1_off35_eq k ⟨1, by decide⟩]; show 128 * k.val + 16 * 1 + 64 + 9 = 1024 * 0 + 64 * (2 * k.val + 1) + 25; omega) _
    have hwB_26 : pair0_last.sl.v2027_4 d L k g2 = Spec.tcol (blkWord fl (wL L).val (2 * t1.val) (64 * (2 * k.val + 1) + 26)) := by
      refine (rv_extract d L g2 (k1_off35 k ⟨1, by decide⟩) (k1_off35_inb k ⟨1, by decide⟩) (by decide) 10 (by decide) (by decide) (by decide)).trans ?_
      exact rv_word d L fl (wL L).val (2 * t1.val) 0 (2 * k.val + 1) 26 (by decide) (by omega) (by decide) g2 hV0 _
        (by rw [k1_off35_eq k ⟨1, by decide⟩]; show 128 * k.val + 16 * 1 + 64 + 10 = 1024 * 0 + 64 * (2 * k.val + 1) + 26; omega) _
    have hwB_27 : pair0_last.sl.v2063_4 d L k g2 = Spec.tcol (blkWord fl (wL L).val (2 * t1.val) (64 * (2 * k.val + 1) + 27)) := by
      refine (rv_extract d L g2 (k1_off35 k ⟨1, by decide⟩) (k1_off35_inb k ⟨1, by decide⟩) (by decide) 11 (by decide) (by decide) (by decide)).trans ?_
      exact rv_word d L fl (wL L).val (2 * t1.val) 0 (2 * k.val + 1) 27 (by decide) (by omega) (by decide) g2 hV0 _
        (by rw [k1_off35_eq k ⟨1, by decide⟩]; show 128 * k.val + 16 * 1 + 64 + 11 = 1024 * 0 + 64 * (2 * k.val + 1) + 27; omega) _
    have hwB_28 : pair0_last.sl.v2099_4 d L k g2 = Spec.tcol (blkWord fl (wL L).val (2 * t1.val) (64 * (2 * k.val + 1) + 28)) := by
      refine (rv_extract d L g2 (k1_off35 k ⟨1, by decide⟩) (k1_off35_inb k ⟨1, by decide⟩) (by decide) 12 (by decide) (by decide) (by decide)).trans ?_
      exact rv_word d L fl (wL L).val (2 * t1.val) 0 (2 * k.val + 1) 28 (by decide) (by omega) (by decide) g2 hV0 _
        (by rw [k1_off35_eq k ⟨1, by decide⟩]; show 128 * k.val + 16 * 1 + 64 + 12 = 1024 * 0 + 64 * (2 * k.val + 1) + 28; omega) _
    have hwB_29 : pair0_last.sl.v2135_4 d L k g2 = Spec.tcol (blkWord fl (wL L).val (2 * t1.val) (64 * (2 * k.val + 1) + 29)) := by
      refine (rv_extract d L g2 (k1_off35 k ⟨1, by decide⟩) (k1_off35_inb k ⟨1, by decide⟩) (by decide) 13 (by decide) (by decide) (by decide)).trans ?_
      exact rv_word d L fl (wL L).val (2 * t1.val) 0 (2 * k.val + 1) 29 (by decide) (by omega) (by decide) g2 hV0 _
        (by rw [k1_off35_eq k ⟨1, by decide⟩]; show 128 * k.val + 16 * 1 + 64 + 13 = 1024 * 0 + 64 * (2 * k.val + 1) + 29; omega) _
    have hwB_30 : pair0_last.sl.v2171_4 d L k g2 = Spec.tcol (blkWord fl (wL L).val (2 * t1.val) (64 * (2 * k.val + 1) + 30)) := by
      refine (rv_extract d L g2 (k1_off35 k ⟨1, by decide⟩) (k1_off35_inb k ⟨1, by decide⟩) (by decide) 14 (by decide) (by decide) (by decide)).trans ?_
      exact rv_word d L fl (wL L).val (2 * t1.val) 0 (2 * k.val + 1) 30 (by decide) (by omega) (by decide) g2 hV0 _
        (by rw [k1_off35_eq k ⟨1, by decide⟩]; show 128 * k.val + 16 * 1 + 64 + 14 = 1024 * 0 + 64 * (2 * k.val + 1) + 30; omega) _
    have hwB_31 : pair0_last.sl.v2207_4 d L k g2 = Spec.tcol (blkWord fl (wL L).val (2 * t1.val) (64 * (2 * k.val + 1) + 31)) := by
      refine (rv_extract d L g2 (k1_off35 k ⟨1, by decide⟩) (k1_off35_inb k ⟨1, by decide⟩) (by decide) 15 (by decide) (by decide) (by decide)).trans ?_
      exact rv_word d L fl (wL L).val (2 * t1.val) 0 (2 * k.val + 1) 31 (by decide) (by omega) (by decide) g2 hV0 _
        (by rw [k1_off35_eq k ⟨1, by decide⟩]; show 128 * k.val + 16 * 1 + 64 + 15 = 1024 * 0 + 64 * (2 * k.val + 1) + 31; omega) _
    have hwB_32 : pair0_last.sl.v1667_5 d L k g2 = Spec.tcol (blkWord fl (wL L).val (2 * t1.val) (64 * (2 * k.val + 1) + 32)) := by
      refine (rv_extract d L g2 (k1_off35 k ⟨2, by decide⟩) (k1_off35_inb k ⟨2, by decide⟩) (by decide) 0 (by decide) (by decide) (by decide)).trans ?_
      exact rv_word d L fl (wL L).val (2 * t1.val) 0 (2 * k.val + 1) 32 (by decide) (by omega) (by decide) g2 hV0 _
        (by rw [k1_off35_eq k ⟨2, by decide⟩]; show 128 * k.val + 16 * 2 + 64 + 0 = 1024 * 0 + 64 * (2 * k.val + 1) + 32; omega) _
    have hwB_33 : pair0_last.sl.v1703_5 d L k g2 = Spec.tcol (blkWord fl (wL L).val (2 * t1.val) (64 * (2 * k.val + 1) + 33)) := by
      refine (rv_extract d L g2 (k1_off35 k ⟨2, by decide⟩) (k1_off35_inb k ⟨2, by decide⟩) (by decide) 1 (by decide) (by decide) (by decide)).trans ?_
      exact rv_word d L fl (wL L).val (2 * t1.val) 0 (2 * k.val + 1) 33 (by decide) (by omega) (by decide) g2 hV0 _
        (by rw [k1_off35_eq k ⟨2, by decide⟩]; show 128 * k.val + 16 * 2 + 64 + 1 = 1024 * 0 + 64 * (2 * k.val + 1) + 33; omega) _
    have hwB_34 : pair0_last.sl.v1739_5 d L k g2 = Spec.tcol (blkWord fl (wL L).val (2 * t1.val) (64 * (2 * k.val + 1) + 34)) := by
      refine (rv_extract d L g2 (k1_off35 k ⟨2, by decide⟩) (k1_off35_inb k ⟨2, by decide⟩) (by decide) 2 (by decide) (by decide) (by decide)).trans ?_
      exact rv_word d L fl (wL L).val (2 * t1.val) 0 (2 * k.val + 1) 34 (by decide) (by omega) (by decide) g2 hV0 _
        (by rw [k1_off35_eq k ⟨2, by decide⟩]; show 128 * k.val + 16 * 2 + 64 + 2 = 1024 * 0 + 64 * (2 * k.val + 1) + 34; omega) _
    have hwB_35 : pair0_last.sl.v1775_5 d L k g2 = Spec.tcol (blkWord fl (wL L).val (2 * t1.val) (64 * (2 * k.val + 1) + 35)) := by
      refine (rv_extract d L g2 (k1_off35 k ⟨2, by decide⟩) (k1_off35_inb k ⟨2, by decide⟩) (by decide) 3 (by decide) (by decide) (by decide)).trans ?_
      exact rv_word d L fl (wL L).val (2 * t1.val) 0 (2 * k.val + 1) 35 (by decide) (by omega) (by decide) g2 hV0 _
        (by rw [k1_off35_eq k ⟨2, by decide⟩]; show 128 * k.val + 16 * 2 + 64 + 3 = 1024 * 0 + 64 * (2 * k.val + 1) + 35; omega) _
    have hwB_36 : pair0_last.sl.v1811_5 d L k g2 = Spec.tcol (blkWord fl (wL L).val (2 * t1.val) (64 * (2 * k.val + 1) + 36)) := by
      refine (rv_extract d L g2 (k1_off35 k ⟨2, by decide⟩) (k1_off35_inb k ⟨2, by decide⟩) (by decide) 4 (by decide) (by decide) (by decide)).trans ?_
      exact rv_word d L fl (wL L).val (2 * t1.val) 0 (2 * k.val + 1) 36 (by decide) (by omega) (by decide) g2 hV0 _
        (by rw [k1_off35_eq k ⟨2, by decide⟩]; show 128 * k.val + 16 * 2 + 64 + 4 = 1024 * 0 + 64 * (2 * k.val + 1) + 36; omega) _
    have hwB_37 : pair0_last.sl.v1847_5 d L k g2 = Spec.tcol (blkWord fl (wL L).val (2 * t1.val) (64 * (2 * k.val + 1) + 37)) := by
      refine (rv_extract d L g2 (k1_off35 k ⟨2, by decide⟩) (k1_off35_inb k ⟨2, by decide⟩) (by decide) 5 (by decide) (by decide) (by decide)).trans ?_
      exact rv_word d L fl (wL L).val (2 * t1.val) 0 (2 * k.val + 1) 37 (by decide) (by omega) (by decide) g2 hV0 _
        (by rw [k1_off35_eq k ⟨2, by decide⟩]; show 128 * k.val + 16 * 2 + 64 + 5 = 1024 * 0 + 64 * (2 * k.val + 1) + 37; omega) _
    have hwB_38 : pair0_last.sl.v1883_5 d L k g2 = Spec.tcol (blkWord fl (wL L).val (2 * t1.val) (64 * (2 * k.val + 1) + 38)) := by
      refine (rv_extract d L g2 (k1_off35 k ⟨2, by decide⟩) (k1_off35_inb k ⟨2, by decide⟩) (by decide) 6 (by decide) (by decide) (by decide)).trans ?_
      exact rv_word d L fl (wL L).val (2 * t1.val) 0 (2 * k.val + 1) 38 (by decide) (by omega) (by decide) g2 hV0 _
        (by rw [k1_off35_eq k ⟨2, by decide⟩]; show 128 * k.val + 16 * 2 + 64 + 6 = 1024 * 0 + 64 * (2 * k.val + 1) + 38; omega) _
    have hwB_39 : pair0_last.sl.v1919_5 d L k g2 = Spec.tcol (blkWord fl (wL L).val (2 * t1.val) (64 * (2 * k.val + 1) + 39)) := by
      refine (rv_extract d L g2 (k1_off35 k ⟨2, by decide⟩) (k1_off35_inb k ⟨2, by decide⟩) (by decide) 7 (by decide) (by decide) (by decide)).trans ?_
      exact rv_word d L fl (wL L).val (2 * t1.val) 0 (2 * k.val + 1) 39 (by decide) (by omega) (by decide) g2 hV0 _
        (by rw [k1_off35_eq k ⟨2, by decide⟩]; show 128 * k.val + 16 * 2 + 64 + 7 = 1024 * 0 + 64 * (2 * k.val + 1) + 39; omega) _
    have hwB_40 : pair0_last.sl.v1955_5 d L k g2 = Spec.tcol (blkWord fl (wL L).val (2 * t1.val) (64 * (2 * k.val + 1) + 40)) := by
      refine (rv_extract d L g2 (k1_off35 k ⟨2, by decide⟩) (k1_off35_inb k ⟨2, by decide⟩) (by decide) 8 (by decide) (by decide) (by decide)).trans ?_
      exact rv_word d L fl (wL L).val (2 * t1.val) 0 (2 * k.val + 1) 40 (by decide) (by omega) (by decide) g2 hV0 _
        (by rw [k1_off35_eq k ⟨2, by decide⟩]; show 128 * k.val + 16 * 2 + 64 + 8 = 1024 * 0 + 64 * (2 * k.val + 1) + 40; omega) _
    have hwB_41 : pair0_last.sl.v1991_5 d L k g2 = Spec.tcol (blkWord fl (wL L).val (2 * t1.val) (64 * (2 * k.val + 1) + 41)) := by
      refine (rv_extract d L g2 (k1_off35 k ⟨2, by decide⟩) (k1_off35_inb k ⟨2, by decide⟩) (by decide) 9 (by decide) (by decide) (by decide)).trans ?_
      exact rv_word d L fl (wL L).val (2 * t1.val) 0 (2 * k.val + 1) 41 (by decide) (by omega) (by decide) g2 hV0 _
        (by rw [k1_off35_eq k ⟨2, by decide⟩]; show 128 * k.val + 16 * 2 + 64 + 9 = 1024 * 0 + 64 * (2 * k.val + 1) + 41; omega) _
    have hwB_42 : pair0_last.sl.v2027_5 d L k g2 = Spec.tcol (blkWord fl (wL L).val (2 * t1.val) (64 * (2 * k.val + 1) + 42)) := by
      refine (rv_extract d L g2 (k1_off35 k ⟨2, by decide⟩) (k1_off35_inb k ⟨2, by decide⟩) (by decide) 10 (by decide) (by decide) (by decide)).trans ?_
      exact rv_word d L fl (wL L).val (2 * t1.val) 0 (2 * k.val + 1) 42 (by decide) (by omega) (by decide) g2 hV0 _
        (by rw [k1_off35_eq k ⟨2, by decide⟩]; show 128 * k.val + 16 * 2 + 64 + 10 = 1024 * 0 + 64 * (2 * k.val + 1) + 42; omega) _
    have hwB_43 : pair0_last.sl.v2063_5 d L k g2 = Spec.tcol (blkWord fl (wL L).val (2 * t1.val) (64 * (2 * k.val + 1) + 43)) := by
      refine (rv_extract d L g2 (k1_off35 k ⟨2, by decide⟩) (k1_off35_inb k ⟨2, by decide⟩) (by decide) 11 (by decide) (by decide) (by decide)).trans ?_
      exact rv_word d L fl (wL L).val (2 * t1.val) 0 (2 * k.val + 1) 43 (by decide) (by omega) (by decide) g2 hV0 _
        (by rw [k1_off35_eq k ⟨2, by decide⟩]; show 128 * k.val + 16 * 2 + 64 + 11 = 1024 * 0 + 64 * (2 * k.val + 1) + 43; omega) _
    have hwB_44 : pair0_last.sl.v2099_5 d L k g2 = Spec.tcol (blkWord fl (wL L).val (2 * t1.val) (64 * (2 * k.val + 1) + 44)) := by
      refine (rv_extract d L g2 (k1_off35 k ⟨2, by decide⟩) (k1_off35_inb k ⟨2, by decide⟩) (by decide) 12 (by decide) (by decide) (by decide)).trans ?_
      exact rv_word d L fl (wL L).val (2 * t1.val) 0 (2 * k.val + 1) 44 (by decide) (by omega) (by decide) g2 hV0 _
        (by rw [k1_off35_eq k ⟨2, by decide⟩]; show 128 * k.val + 16 * 2 + 64 + 12 = 1024 * 0 + 64 * (2 * k.val + 1) + 44; omega) _
    have hwB_45 : pair0_last.sl.v2135_5 d L k g2 = Spec.tcol (blkWord fl (wL L).val (2 * t1.val) (64 * (2 * k.val + 1) + 45)) := by
      refine (rv_extract d L g2 (k1_off35 k ⟨2, by decide⟩) (k1_off35_inb k ⟨2, by decide⟩) (by decide) 13 (by decide) (by decide) (by decide)).trans ?_
      exact rv_word d L fl (wL L).val (2 * t1.val) 0 (2 * k.val + 1) 45 (by decide) (by omega) (by decide) g2 hV0 _
        (by rw [k1_off35_eq k ⟨2, by decide⟩]; show 128 * k.val + 16 * 2 + 64 + 13 = 1024 * 0 + 64 * (2 * k.val + 1) + 45; omega) _
    have hwB_46 : pair0_last.sl.v2171_5 d L k g2 = Spec.tcol (blkWord fl (wL L).val (2 * t1.val) (64 * (2 * k.val + 1) + 46)) := by
      refine (rv_extract d L g2 (k1_off35 k ⟨2, by decide⟩) (k1_off35_inb k ⟨2, by decide⟩) (by decide) 14 (by decide) (by decide) (by decide)).trans ?_
      exact rv_word d L fl (wL L).val (2 * t1.val) 0 (2 * k.val + 1) 46 (by decide) (by omega) (by decide) g2 hV0 _
        (by rw [k1_off35_eq k ⟨2, by decide⟩]; show 128 * k.val + 16 * 2 + 64 + 14 = 1024 * 0 + 64 * (2 * k.val + 1) + 46; omega) _
    have hwB_47 : pair0_last.sl.v2207_5 d L k g2 = Spec.tcol (blkWord fl (wL L).val (2 * t1.val) (64 * (2 * k.val + 1) + 47)) := by
      refine (rv_extract d L g2 (k1_off35 k ⟨2, by decide⟩) (k1_off35_inb k ⟨2, by decide⟩) (by decide) 15 (by decide) (by decide) (by decide)).trans ?_
      exact rv_word d L fl (wL L).val (2 * t1.val) 0 (2 * k.val + 1) 47 (by decide) (by omega) (by decide) g2 hV0 _
        (by rw [k1_off35_eq k ⟨2, by decide⟩]; show 128 * k.val + 16 * 2 + 64 + 15 = 1024 * 0 + 64 * (2 * k.val + 1) + 47; omega) _
    have hwB_48 : pair0_last.sl.v1572 d L k g2 = Spec.tcol (blkWord fl (wL L).val (2 * t1.val) (64 * (2 * k.val + 1) + 48)) := by
      refine (rv_extract d L g2 (k1_off52 k) (k1_off52_inb k) (by decide) 0 (by decide) (by decide) (by decide)).trans ?_
      exact rv_word d L fl (wL L).val (2 * t1.val) 0 (2 * k.val + 1) 48 (by decide) (by omega) (by decide) g2 hV0 _
        (by rw [k1_off52_eq k]; show 128 * k.val + 112 + 0 = 1024 * 0 + 64 * (2 * k.val + 1) + 48; omega) _
    have hwB_49 : pair0_last.sl.v1606 d L k g2 = Spec.tcol (blkWord fl (wL L).val (2 * t1.val) (64 * (2 * k.val + 1) + 49)) := by
      refine (rv_extract d L g2 (k1_off52 k) (k1_off52_inb k) (by decide) 1 (by decide) (by decide) (by decide)).trans ?_
      exact rv_word d L fl (wL L).val (2 * t1.val) 0 (2 * k.val + 1) 49 (by decide) (by omega) (by decide) g2 hV0 _
        (by rw [k1_off52_eq k]; show 128 * k.val + 112 + 1 = 1024 * 0 + 64 * (2 * k.val + 1) + 49; omega) _
    have sB0_0 : addf (AccMath.accVec (rowF fl tab (wL L).val (2 * t1.val) (2 * k.val + 1)) (offF fl (wL L).val (2 * t1.val) (2 * k.val + 1)) 0 0) (shapeCast S16 (pair0_last.sl.v1673_3 d L tab t1 k r g1 g2 hR hin h5) hc16) = AccMath.accVec (rowF fl tab (wL L).val (2 * t1.val) (2 * k.val + 1)) (offF fl (wL L).val (2 * t1.val) (2 * k.val + 1)) 0 1 :=
      acc_step d L fl tab (wL L).val (2 * t1.val) (2 * k.val + 1) 1 _ (hRB _) ⟨0, by decide⟩ ⟨0, by decide⟩ _ rfl _ hwB_0 _ (k1_off36_form ⟨0, by decide⟩ _ _) _ hc16
    have sB0_1 : addf (AccMath.accVec (rowF fl tab (wL L).val (2 * t1.val) (2 * k.val + 1)) (offF fl (wL L).val (2 * t1.val) (2 * k.val + 1)) 0 1) (shapeCast S16 (pair0_last.sl.v1709_3 d L tab t1 k r g1 g2 hR hin h5) hc16) = AccMath.accVec (rowF fl tab (wL L).val (2 * t1.val) (2 * k.val + 1)) (offF fl (wL L).val (2 * t1.val) (2 * k.val + 1)) 0 2 :=
      acc_step d L fl tab (wL L).val (2 * t1.val) (2 * k.val + 1) 1 _ (hRB _) ⟨1, by decide⟩ ⟨0, by decide⟩ _ rfl _ hwB_1 _ (k1_off37_form ⟨0, by decide⟩ _ _) _ hc16
    have sB0_2 : addf (AccMath.accVec (rowF fl tab (wL L).val (2 * t1.val) (2 * k.val + 1)) (offF fl (wL L).val (2 * t1.val) (2 * k.val + 1)) 0 2) (shapeCast S16 (pair0_last.sl.v1745_3 d L tab t1 k r g1 g2 hR hin h5) hc16) = AccMath.accVec (rowF fl tab (wL L).val (2 * t1.val) (2 * k.val + 1)) (offF fl (wL L).val (2 * t1.val) (2 * k.val + 1)) 0 3 :=
      acc_step d L fl tab (wL L).val (2 * t1.val) (2 * k.val + 1) 1 _ (hRB _) ⟨2, by decide⟩ ⟨0, by decide⟩ _ rfl _ hwB_2 _ (k1_off38_form ⟨0, by decide⟩ _ _) _ hc16
    have sB0_3 : addf (AccMath.accVec (rowF fl tab (wL L).val (2 * t1.val) (2 * k.val + 1)) (offF fl (wL L).val (2 * t1.val) (2 * k.val + 1)) 0 3) (shapeCast S16 (pair0_last.sl.v1781_3 d L tab t1 k r g1 g2 hR hin h5) hc16) = AccMath.accVec (rowF fl tab (wL L).val (2 * t1.val) (2 * k.val + 1)) (offF fl (wL L).val (2 * t1.val) (2 * k.val + 1)) 0 4 :=
      acc_step d L fl tab (wL L).val (2 * t1.val) (2 * k.val + 1) 1 _ (hRB _) ⟨3, by decide⟩ ⟨0, by decide⟩ _ rfl _ hwB_3 _ (k1_off39_form ⟨0, by decide⟩ _ _) _ hc16
    have sB0_4 : addf (AccMath.accVec (rowF fl tab (wL L).val (2 * t1.val) (2 * k.val + 1)) (offF fl (wL L).val (2 * t1.val) (2 * k.val + 1)) 0 4) (shapeCast S16 (pair0_last.sl.v1817_3 d L tab t1 k r g1 g2 hR hin h5) hc16) = AccMath.accVec (rowF fl tab (wL L).val (2 * t1.val) (2 * k.val + 1)) (offF fl (wL L).val (2 * t1.val) (2 * k.val + 1)) 0 5 :=
      acc_step d L fl tab (wL L).val (2 * t1.val) (2 * k.val + 1) 1 _ (hRB _) ⟨4, by decide⟩ ⟨0, by decide⟩ _ rfl _ hwB_4 _ (k1_off40_form ⟨0, by decide⟩ _ _) _ hc16
    have sB0_5 : addf (AccMath.accVec (rowF fl tab (wL L).val (2 * t1.val) (2 * k.val + 1)) (offF fl (wL L).val (2 * t1.val) (2 * k.val + 1)) 0 5) (shapeCast S16 (pair0_last.sl.v1853_3 d L tab t1 k r g1 g2 hR hin h5) hc16) = AccMath.accVec (rowF fl tab (wL L).val (2 * t1.val) (2 * k.val + 1)) (offF fl (wL L).val (2 * t1.val) (2 * k.val + 1)) 0 6 :=
      acc_step d L fl tab (wL L).val (2 * t1.val) (2 * k.val + 1) 1 _ (hRB _) ⟨5, by decide⟩ ⟨0, by decide⟩ _ rfl _ hwB_5 _ (k1_off41_form ⟨0, by decide⟩ _ _) _ hc16
    have sB0_6 : addf (AccMath.accVec (rowF fl tab (wL L).val (2 * t1.val) (2 * k.val + 1)) (offF fl (wL L).val (2 * t1.val) (2 * k.val + 1)) 0 6) (shapeCast S16 (pair0_last.sl.v1889_3 d L tab t1 k r g1 g2 hR hin h5) hc16) = AccMath.accVec (rowF fl tab (wL L).val (2 * t1.val) (2 * k.val + 1)) (offF fl (wL L).val (2 * t1.val) (2 * k.val + 1)) 0 7 :=
      acc_step d L fl tab (wL L).val (2 * t1.val) (2 * k.val + 1) 1 _ (hRB _) ⟨6, by decide⟩ ⟨0, by decide⟩ _ rfl _ hwB_6 _ (k1_off42_form ⟨0, by decide⟩ _ _) _ hc16
    have sB0_7 : addf (AccMath.accVec (rowF fl tab (wL L).val (2 * t1.val) (2 * k.val + 1)) (offF fl (wL L).val (2 * t1.val) (2 * k.val + 1)) 0 7) (shapeCast S16 (pair0_last.sl.v1925_3 d L tab t1 k r g1 g2 hR hin h5) hc16) = AccMath.accVec (rowF fl tab (wL L).val (2 * t1.val) (2 * k.val + 1)) (offF fl (wL L).val (2 * t1.val) (2 * k.val + 1)) 0 8 :=
      acc_step d L fl tab (wL L).val (2 * t1.val) (2 * k.val + 1) 1 _ (hRB _) ⟨7, by decide⟩ ⟨0, by decide⟩ _ rfl _ hwB_7 _ (k1_off43_form ⟨0, by decide⟩ _ _) _ hc16
    have sB0_8 : addf (AccMath.accVec (rowF fl tab (wL L).val (2 * t1.val) (2 * k.val + 1)) (offF fl (wL L).val (2 * t1.val) (2 * k.val + 1)) 0 8) (shapeCast S16 (pair0_last.sl.v1961_3 d L tab t1 k r g1 g2 hR hin h5) hc16) = AccMath.accVec (rowF fl tab (wL L).val (2 * t1.val) (2 * k.val + 1)) (offF fl (wL L).val (2 * t1.val) (2 * k.val + 1)) 0 9 :=
      acc_step d L fl tab (wL L).val (2 * t1.val) (2 * k.val + 1) 1 _ (hRB _) ⟨8, by decide⟩ ⟨0, by decide⟩ _ rfl _ hwB_8 _ (k1_off44_form ⟨0, by decide⟩ _ _) _ hc16
    have sB0_9 : addf (AccMath.accVec (rowF fl tab (wL L).val (2 * t1.val) (2 * k.val + 1)) (offF fl (wL L).val (2 * t1.val) (2 * k.val + 1)) 0 9) (shapeCast S16 (pair0_last.sl.v1997_3 d L tab t1 k r g1 g2 hR hin h5) hc16) = AccMath.accVec (rowF fl tab (wL L).val (2 * t1.val) (2 * k.val + 1)) (offF fl (wL L).val (2 * t1.val) (2 * k.val + 1)) 0 10 :=
      acc_step d L fl tab (wL L).val (2 * t1.val) (2 * k.val + 1) 1 _ (hRB _) ⟨9, by decide⟩ ⟨0, by decide⟩ _ rfl _ hwB_9 _ (k1_off45_form ⟨0, by decide⟩ _ _) _ hc16
    have sB0_10 : addf (AccMath.accVec (rowF fl tab (wL L).val (2 * t1.val) (2 * k.val + 1)) (offF fl (wL L).val (2 * t1.val) (2 * k.val + 1)) 0 10) (shapeCast S16 (pair0_last.sl.v2033_3 d L tab t1 k r g1 g2 hR hin h5) hc16) = AccMath.accVec (rowF fl tab (wL L).val (2 * t1.val) (2 * k.val + 1)) (offF fl (wL L).val (2 * t1.val) (2 * k.val + 1)) 0 11 :=
      acc_step d L fl tab (wL L).val (2 * t1.val) (2 * k.val + 1) 1 _ (hRB _) ⟨10, by decide⟩ ⟨0, by decide⟩ _ rfl _ hwB_10 _ (k1_off46_form ⟨0, by decide⟩ _ _) _ hc16
    have sB0_11 : addf (AccMath.accVec (rowF fl tab (wL L).val (2 * t1.val) (2 * k.val + 1)) (offF fl (wL L).val (2 * t1.val) (2 * k.val + 1)) 0 11) (shapeCast S16 (pair0_last.sl.v2069_3 d L tab t1 k r g1 g2 hR hin h5) hc16) = AccMath.accVec (rowF fl tab (wL L).val (2 * t1.val) (2 * k.val + 1)) (offF fl (wL L).val (2 * t1.val) (2 * k.val + 1)) 0 12 :=
      acc_step d L fl tab (wL L).val (2 * t1.val) (2 * k.val + 1) 1 _ (hRB _) ⟨11, by decide⟩ ⟨0, by decide⟩ _ rfl _ hwB_11 _ (k1_off47_form ⟨0, by decide⟩ _ _) _ hc16
    have sB0_12 : addf (AccMath.accVec (rowF fl tab (wL L).val (2 * t1.val) (2 * k.val + 1)) (offF fl (wL L).val (2 * t1.val) (2 * k.val + 1)) 0 12) (shapeCast S16 (pair0_last.sl.v2105_3 d L tab t1 k r g1 g2 hR hin h5) hc16) = AccMath.accVec (rowF fl tab (wL L).val (2 * t1.val) (2 * k.val + 1)) (offF fl (wL L).val (2 * t1.val) (2 * k.val + 1)) 0 13 :=
      acc_step d L fl tab (wL L).val (2 * t1.val) (2 * k.val + 1) 1 _ (hRB _) ⟨12, by decide⟩ ⟨0, by decide⟩ _ rfl _ hwB_12 _ (k1_off48_form ⟨0, by decide⟩ _ _) _ hc16
    have sB0_13 : addf (AccMath.accVec (rowF fl tab (wL L).val (2 * t1.val) (2 * k.val + 1)) (offF fl (wL L).val (2 * t1.val) (2 * k.val + 1)) 0 13) (shapeCast S16 (pair0_last.sl.v2141_3 d L tab t1 k r g1 g2 hR hin h5) hc16) = AccMath.accVec (rowF fl tab (wL L).val (2 * t1.val) (2 * k.val + 1)) (offF fl (wL L).val (2 * t1.val) (2 * k.val + 1)) 0 14 :=
      acc_step d L fl tab (wL L).val (2 * t1.val) (2 * k.val + 1) 1 _ (hRB _) ⟨13, by decide⟩ ⟨0, by decide⟩ _ rfl _ hwB_13 _ (k1_off49_form ⟨0, by decide⟩ _ _) _ hc16
    have sB0_14 : addf (AccMath.accVec (rowF fl tab (wL L).val (2 * t1.val) (2 * k.val + 1)) (offF fl (wL L).val (2 * t1.val) (2 * k.val + 1)) 0 14) (shapeCast S16 (pair0_last.sl.v2177_3 d L tab t1 k r g1 g2 hR hin h5) hc16) = AccMath.accVec (rowF fl tab (wL L).val (2 * t1.val) (2 * k.val + 1)) (offF fl (wL L).val (2 * t1.val) (2 * k.val + 1)) 0 15 :=
      acc_step d L fl tab (wL L).val (2 * t1.val) (2 * k.val + 1) 1 _ (hRB _) ⟨14, by decide⟩ ⟨0, by decide⟩ _ rfl _ hwB_14 _ (k1_off50_form ⟨0, by decide⟩ _ _) _ hc16
    have sB0_15 : addf (AccMath.accVec (rowF fl tab (wL L).val (2 * t1.val) (2 * k.val + 1)) (offF fl (wL L).val (2 * t1.val) (2 * k.val + 1)) 0 15) (shapeCast S16 (pair0_last.sl.v2213_3 d L tab t1 k r g1 g2 hR hin h5) hc16) = AccMath.accVec (rowF fl tab (wL L).val (2 * t1.val) (2 * k.val + 1)) (offF fl (wL L).val (2 * t1.val) (2 * k.val + 1)) 0 16 :=
      acc_step d L fl tab (wL L).val (2 * t1.val) (2 * k.val + 1) 1 _ (hRB _) ⟨15, by decide⟩ ⟨0, by decide⟩ _ rfl _ hwB_15 _ (k1_off51_form ⟨0, by decide⟩ _ _) _ hc16
    have sB0_16 : addf (AccMath.accVec (rowF fl tab (wL L).val (2 * t1.val) (2 * k.val + 1)) (offF fl (wL L).val (2 * t1.val) (2 * k.val + 1)) 0 16) (shapeCast S16 (pair0_last.sl.v1673_4 d L tab t1 k r g1 g2 hR hin h5) hc16) = AccMath.accVec (rowF fl tab (wL L).val (2 * t1.val) (2 * k.val + 1)) (offF fl (wL L).val (2 * t1.val) (2 * k.val + 1)) 0 17 :=
      acc_step d L fl tab (wL L).val (2 * t1.val) (2 * k.val + 1) 1 _ (hRB _) ⟨16, by decide⟩ ⟨0, by decide⟩ _ rfl _ hwB_16 _ (k1_off36_form ⟨1, by decide⟩ _ _) _ hc16
    have sB0_17 : addf (AccMath.accVec (rowF fl tab (wL L).val (2 * t1.val) (2 * k.val + 1)) (offF fl (wL L).val (2 * t1.val) (2 * k.val + 1)) 0 17) (shapeCast S16 (pair0_last.sl.v1709_4 d L tab t1 k r g1 g2 hR hin h5) hc16) = AccMath.accVec (rowF fl tab (wL L).val (2 * t1.val) (2 * k.val + 1)) (offF fl (wL L).val (2 * t1.val) (2 * k.val + 1)) 0 18 :=
      acc_step d L fl tab (wL L).val (2 * t1.val) (2 * k.val + 1) 1 _ (hRB _) ⟨17, by decide⟩ ⟨0, by decide⟩ _ rfl _ hwB_17 _ (k1_off37_form ⟨1, by decide⟩ _ _) _ hc16
    have sB0_18 : addf (AccMath.accVec (rowF fl tab (wL L).val (2 * t1.val) (2 * k.val + 1)) (offF fl (wL L).val (2 * t1.val) (2 * k.val + 1)) 0 18) (shapeCast S16 (pair0_last.sl.v1745_4 d L tab t1 k r g1 g2 hR hin h5) hc16) = AccMath.accVec (rowF fl tab (wL L).val (2 * t1.val) (2 * k.val + 1)) (offF fl (wL L).val (2 * t1.val) (2 * k.val + 1)) 0 19 :=
      acc_step d L fl tab (wL L).val (2 * t1.val) (2 * k.val + 1) 1 _ (hRB _) ⟨18, by decide⟩ ⟨0, by decide⟩ _ rfl _ hwB_18 _ (k1_off38_form ⟨1, by decide⟩ _ _) _ hc16
    have sB0_19 : addf (AccMath.accVec (rowF fl tab (wL L).val (2 * t1.val) (2 * k.val + 1)) (offF fl (wL L).val (2 * t1.val) (2 * k.val + 1)) 0 19) (shapeCast S16 (pair0_last.sl.v1781_4 d L tab t1 k r g1 g2 hR hin h5) hc16) = AccMath.accVec (rowF fl tab (wL L).val (2 * t1.val) (2 * k.val + 1)) (offF fl (wL L).val (2 * t1.val) (2 * k.val + 1)) 0 20 :=
      acc_step d L fl tab (wL L).val (2 * t1.val) (2 * k.val + 1) 1 _ (hRB _) ⟨19, by decide⟩ ⟨0, by decide⟩ _ rfl _ hwB_19 _ (k1_off39_form ⟨1, by decide⟩ _ _) _ hc16
    have sB0_20 : addf (AccMath.accVec (rowF fl tab (wL L).val (2 * t1.val) (2 * k.val + 1)) (offF fl (wL L).val (2 * t1.val) (2 * k.val + 1)) 0 20) (shapeCast S16 (pair0_last.sl.v1817_4 d L tab t1 k r g1 g2 hR hin h5) hc16) = AccMath.accVec (rowF fl tab (wL L).val (2 * t1.val) (2 * k.val + 1)) (offF fl (wL L).val (2 * t1.val) (2 * k.val + 1)) 0 21 :=
      acc_step d L fl tab (wL L).val (2 * t1.val) (2 * k.val + 1) 1 _ (hRB _) ⟨20, by decide⟩ ⟨0, by decide⟩ _ rfl _ hwB_20 _ (k1_off40_form ⟨1, by decide⟩ _ _) _ hc16
    have sB0_21 : addf (AccMath.accVec (rowF fl tab (wL L).val (2 * t1.val) (2 * k.val + 1)) (offF fl (wL L).val (2 * t1.val) (2 * k.val + 1)) 0 21) (shapeCast S16 (pair0_last.sl.v1853_4 d L tab t1 k r g1 g2 hR hin h5) hc16) = AccMath.accVec (rowF fl tab (wL L).val (2 * t1.val) (2 * k.val + 1)) (offF fl (wL L).val (2 * t1.val) (2 * k.val + 1)) 0 22 :=
      acc_step d L fl tab (wL L).val (2 * t1.val) (2 * k.val + 1) 1 _ (hRB _) ⟨21, by decide⟩ ⟨0, by decide⟩ _ rfl _ hwB_21 _ (k1_off41_form ⟨1, by decide⟩ _ _) _ hc16
    have sB0_22 : addf (AccMath.accVec (rowF fl tab (wL L).val (2 * t1.val) (2 * k.val + 1)) (offF fl (wL L).val (2 * t1.val) (2 * k.val + 1)) 0 22) (shapeCast S16 (pair0_last.sl.v1889_4 d L tab t1 k r g1 g2 hR hin h5) hc16) = AccMath.accVec (rowF fl tab (wL L).val (2 * t1.val) (2 * k.val + 1)) (offF fl (wL L).val (2 * t1.val) (2 * k.val + 1)) 0 23 :=
      acc_step d L fl tab (wL L).val (2 * t1.val) (2 * k.val + 1) 1 _ (hRB _) ⟨22, by decide⟩ ⟨0, by decide⟩ _ rfl _ hwB_22 _ (k1_off42_form ⟨1, by decide⟩ _ _) _ hc16
    have sB0_23 : addf (AccMath.accVec (rowF fl tab (wL L).val (2 * t1.val) (2 * k.val + 1)) (offF fl (wL L).val (2 * t1.val) (2 * k.val + 1)) 0 23) (shapeCast S16 (pair0_last.sl.v1925_4 d L tab t1 k r g1 g2 hR hin h5) hc16) = AccMath.accVec (rowF fl tab (wL L).val (2 * t1.val) (2 * k.val + 1)) (offF fl (wL L).val (2 * t1.val) (2 * k.val + 1)) 0 24 :=
      acc_step d L fl tab (wL L).val (2 * t1.val) (2 * k.val + 1) 1 _ (hRB _) ⟨23, by decide⟩ ⟨0, by decide⟩ _ rfl _ hwB_23 _ (k1_off43_form ⟨1, by decide⟩ _ _) _ hc16
    have sB0_24 : addf (AccMath.accVec (rowF fl tab (wL L).val (2 * t1.val) (2 * k.val + 1)) (offF fl (wL L).val (2 * t1.val) (2 * k.val + 1)) 0 24) (shapeCast S16 (pair0_last.sl.v1961_4 d L tab t1 k r g1 g2 hR hin h5) hc16) = AccMath.accVec (rowF fl tab (wL L).val (2 * t1.val) (2 * k.val + 1)) (offF fl (wL L).val (2 * t1.val) (2 * k.val + 1)) 0 25 :=
      acc_step d L fl tab (wL L).val (2 * t1.val) (2 * k.val + 1) 1 _ (hRB _) ⟨24, by decide⟩ ⟨0, by decide⟩ _ rfl _ hwB_24 _ (k1_off44_form ⟨1, by decide⟩ _ _) _ hc16
    have sB0_25 : addf (AccMath.accVec (rowF fl tab (wL L).val (2 * t1.val) (2 * k.val + 1)) (offF fl (wL L).val (2 * t1.val) (2 * k.val + 1)) 0 25) (shapeCast S16 (pair0_last.sl.v1997_4 d L tab t1 k r g1 g2 hR hin h5) hc16) = AccMath.accVec (rowF fl tab (wL L).val (2 * t1.val) (2 * k.val + 1)) (offF fl (wL L).val (2 * t1.val) (2 * k.val + 1)) 0 26 :=
      acc_step d L fl tab (wL L).val (2 * t1.val) (2 * k.val + 1) 1 _ (hRB _) ⟨25, by decide⟩ ⟨0, by decide⟩ _ rfl _ hwB_25 _ (k1_off45_form ⟨1, by decide⟩ _ _) _ hc16
    have sB0_26 : addf (AccMath.accVec (rowF fl tab (wL L).val (2 * t1.val) (2 * k.val + 1)) (offF fl (wL L).val (2 * t1.val) (2 * k.val + 1)) 0 26) (shapeCast S16 (pair0_last.sl.v2033_4 d L tab t1 k r g1 g2 hR hin h5) hc16) = AccMath.accVec (rowF fl tab (wL L).val (2 * t1.val) (2 * k.val + 1)) (offF fl (wL L).val (2 * t1.val) (2 * k.val + 1)) 0 27 :=
      acc_step d L fl tab (wL L).val (2 * t1.val) (2 * k.val + 1) 1 _ (hRB _) ⟨26, by decide⟩ ⟨0, by decide⟩ _ rfl _ hwB_26 _ (k1_off46_form ⟨1, by decide⟩ _ _) _ hc16
    have sB0_27 : addf (AccMath.accVec (rowF fl tab (wL L).val (2 * t1.val) (2 * k.val + 1)) (offF fl (wL L).val (2 * t1.val) (2 * k.val + 1)) 0 27) (shapeCast S16 (pair0_last.sl.v2069_4 d L tab t1 k r g1 g2 hR hin h5) hc16) = AccMath.accVec (rowF fl tab (wL L).val (2 * t1.val) (2 * k.val + 1)) (offF fl (wL L).val (2 * t1.val) (2 * k.val + 1)) 0 28 :=
      acc_step d L fl tab (wL L).val (2 * t1.val) (2 * k.val + 1) 1 _ (hRB _) ⟨27, by decide⟩ ⟨0, by decide⟩ _ rfl _ hwB_27 _ (k1_off47_form ⟨1, by decide⟩ _ _) _ hc16
    have sB0_28 : addf (AccMath.accVec (rowF fl tab (wL L).val (2 * t1.val) (2 * k.val + 1)) (offF fl (wL L).val (2 * t1.val) (2 * k.val + 1)) 0 28) (shapeCast S16 (pair0_last.sl.v2105_4 d L tab t1 k r g1 g2 hR hin h5) hc16) = AccMath.accVec (rowF fl tab (wL L).val (2 * t1.val) (2 * k.val + 1)) (offF fl (wL L).val (2 * t1.val) (2 * k.val + 1)) 0 29 :=
      acc_step d L fl tab (wL L).val (2 * t1.val) (2 * k.val + 1) 1 _ (hRB _) ⟨28, by decide⟩ ⟨0, by decide⟩ _ rfl _ hwB_28 _ (k1_off48_form ⟨1, by decide⟩ _ _) _ hc16
    have sB0_29 : addf (AccMath.accVec (rowF fl tab (wL L).val (2 * t1.val) (2 * k.val + 1)) (offF fl (wL L).val (2 * t1.val) (2 * k.val + 1)) 0 29) (shapeCast S16 (pair0_last.sl.v2141_4 d L tab t1 k r g1 g2 hR hin h5) hc16) = AccMath.accVec (rowF fl tab (wL L).val (2 * t1.val) (2 * k.val + 1)) (offF fl (wL L).val (2 * t1.val) (2 * k.val + 1)) 0 30 :=
      acc_step d L fl tab (wL L).val (2 * t1.val) (2 * k.val + 1) 1 _ (hRB _) ⟨29, by decide⟩ ⟨0, by decide⟩ _ rfl _ hwB_29 _ (k1_off49_form ⟨1, by decide⟩ _ _) _ hc16
    have sB0_30 : addf (AccMath.accVec (rowF fl tab (wL L).val (2 * t1.val) (2 * k.val + 1)) (offF fl (wL L).val (2 * t1.val) (2 * k.val + 1)) 0 30) (shapeCast S16 (pair0_last.sl.v2177_4 d L tab t1 k r g1 g2 hR hin h5) hc16) = AccMath.accVec (rowF fl tab (wL L).val (2 * t1.val) (2 * k.val + 1)) (offF fl (wL L).val (2 * t1.val) (2 * k.val + 1)) 0 31 :=
      acc_step d L fl tab (wL L).val (2 * t1.val) (2 * k.val + 1) 1 _ (hRB _) ⟨30, by decide⟩ ⟨0, by decide⟩ _ rfl _ hwB_30 _ (k1_off50_form ⟨1, by decide⟩ _ _) _ hc16
    have sB0_31 : addf (AccMath.accVec (rowF fl tab (wL L).val (2 * t1.val) (2 * k.val + 1)) (offF fl (wL L).val (2 * t1.val) (2 * k.val + 1)) 0 31) (shapeCast S16 (pair0_last.sl.v2213_4 d L tab t1 k r g1 g2 hR hin h5) hc16) = AccMath.accVec (rowF fl tab (wL L).val (2 * t1.val) (2 * k.val + 1)) (offF fl (wL L).val (2 * t1.val) (2 * k.val + 1)) 0 32 :=
      acc_step d L fl tab (wL L).val (2 * t1.val) (2 * k.val + 1) 1 _ (hRB _) ⟨31, by decide⟩ ⟨0, by decide⟩ _ rfl _ hwB_31 _ (k1_off51_form ⟨1, by decide⟩ _ _) _ hc16
    have sB0_32 : addf (AccMath.accVec (rowF fl tab (wL L).val (2 * t1.val) (2 * k.val + 1)) (offF fl (wL L).val (2 * t1.val) (2 * k.val + 1)) 0 32) (shapeCast S16 (pair0_last.sl.v1673_5 d L tab t1 k r g1 g2 hR hin h5) hc16) = AccMath.accVec (rowF fl tab (wL L).val (2 * t1.val) (2 * k.val + 1)) (offF fl (wL L).val (2 * t1.val) (2 * k.val + 1)) 0 33 :=
      acc_step d L fl tab (wL L).val (2 * t1.val) (2 * k.val + 1) 1 _ (hRB _) ⟨32, by decide⟩ ⟨0, by decide⟩ _ rfl _ hwB_32 _ (k1_off36_form ⟨2, by decide⟩ _ _) _ hc16
    have sB0_33 : addf (AccMath.accVec (rowF fl tab (wL L).val (2 * t1.val) (2 * k.val + 1)) (offF fl (wL L).val (2 * t1.val) (2 * k.val + 1)) 0 33) (shapeCast S16 (pair0_last.sl.v1709_5 d L tab t1 k r g1 g2 hR hin h5) hc16) = AccMath.accVec (rowF fl tab (wL L).val (2 * t1.val) (2 * k.val + 1)) (offF fl (wL L).val (2 * t1.val) (2 * k.val + 1)) 0 34 :=
      acc_step d L fl tab (wL L).val (2 * t1.val) (2 * k.val + 1) 1 _ (hRB _) ⟨33, by decide⟩ ⟨0, by decide⟩ _ rfl _ hwB_33 _ (k1_off37_form ⟨2, by decide⟩ _ _) _ hc16
    have sB0_34 : addf (AccMath.accVec (rowF fl tab (wL L).val (2 * t1.val) (2 * k.val + 1)) (offF fl (wL L).val (2 * t1.val) (2 * k.val + 1)) 0 34) (shapeCast S16 (pair0_last.sl.v1745_5 d L tab t1 k r g1 g2 hR hin h5) hc16) = AccMath.accVec (rowF fl tab (wL L).val (2 * t1.val) (2 * k.val + 1)) (offF fl (wL L).val (2 * t1.val) (2 * k.val + 1)) 0 35 :=
      acc_step d L fl tab (wL L).val (2 * t1.val) (2 * k.val + 1) 1 _ (hRB _) ⟨34, by decide⟩ ⟨0, by decide⟩ _ rfl _ hwB_34 _ (k1_off38_form ⟨2, by decide⟩ _ _) _ hc16
    have sB0_35 : addf (AccMath.accVec (rowF fl tab (wL L).val (2 * t1.val) (2 * k.val + 1)) (offF fl (wL L).val (2 * t1.val) (2 * k.val + 1)) 0 35) (shapeCast S16 (pair0_last.sl.v1781_5 d L tab t1 k r g1 g2 hR hin h5) hc16) = AccMath.accVec (rowF fl tab (wL L).val (2 * t1.val) (2 * k.val + 1)) (offF fl (wL L).val (2 * t1.val) (2 * k.val + 1)) 0 36 :=
      acc_step d L fl tab (wL L).val (2 * t1.val) (2 * k.val + 1) 1 _ (hRB _) ⟨35, by decide⟩ ⟨0, by decide⟩ _ rfl _ hwB_35 _ (k1_off39_form ⟨2, by decide⟩ _ _) _ hc16
    have sB0_36 : addf (AccMath.accVec (rowF fl tab (wL L).val (2 * t1.val) (2 * k.val + 1)) (offF fl (wL L).val (2 * t1.val) (2 * k.val + 1)) 0 36) (shapeCast S16 (pair0_last.sl.v1817_5 d L tab t1 k r g1 g2 hR hin h5) hc16) = AccMath.accVec (rowF fl tab (wL L).val (2 * t1.val) (2 * k.val + 1)) (offF fl (wL L).val (2 * t1.val) (2 * k.val + 1)) 0 37 :=
      acc_step d L fl tab (wL L).val (2 * t1.val) (2 * k.val + 1) 1 _ (hRB _) ⟨36, by decide⟩ ⟨0, by decide⟩ _ rfl _ hwB_36 _ (k1_off40_form ⟨2, by decide⟩ _ _) _ hc16
    have sB0_37 : addf (AccMath.accVec (rowF fl tab (wL L).val (2 * t1.val) (2 * k.val + 1)) (offF fl (wL L).val (2 * t1.val) (2 * k.val + 1)) 0 37) (shapeCast S16 (pair0_last.sl.v1853_5 d L tab t1 k r g1 g2 hR hin h5) hc16) = AccMath.accVec (rowF fl tab (wL L).val (2 * t1.val) (2 * k.val + 1)) (offF fl (wL L).val (2 * t1.val) (2 * k.val + 1)) 0 38 :=
      acc_step d L fl tab (wL L).val (2 * t1.val) (2 * k.val + 1) 1 _ (hRB _) ⟨37, by decide⟩ ⟨0, by decide⟩ _ rfl _ hwB_37 _ (k1_off41_form ⟨2, by decide⟩ _ _) _ hc16
    have sB0_38 : addf (AccMath.accVec (rowF fl tab (wL L).val (2 * t1.val) (2 * k.val + 1)) (offF fl (wL L).val (2 * t1.val) (2 * k.val + 1)) 0 38) (shapeCast S16 (pair0_last.sl.v1889_5 d L tab t1 k r g1 g2 hR hin h5) hc16) = AccMath.accVec (rowF fl tab (wL L).val (2 * t1.val) (2 * k.val + 1)) (offF fl (wL L).val (2 * t1.val) (2 * k.val + 1)) 0 39 :=
      acc_step d L fl tab (wL L).val (2 * t1.val) (2 * k.val + 1) 1 _ (hRB _) ⟨38, by decide⟩ ⟨0, by decide⟩ _ rfl _ hwB_38 _ (k1_off42_form ⟨2, by decide⟩ _ _) _ hc16
    have sB0_39 : addf (AccMath.accVec (rowF fl tab (wL L).val (2 * t1.val) (2 * k.val + 1)) (offF fl (wL L).val (2 * t1.val) (2 * k.val + 1)) 0 39) (shapeCast S16 (pair0_last.sl.v1925_5 d L tab t1 k r g1 g2 hR hin h5) hc16) = AccMath.accVec (rowF fl tab (wL L).val (2 * t1.val) (2 * k.val + 1)) (offF fl (wL L).val (2 * t1.val) (2 * k.val + 1)) 0 40 :=
      acc_step d L fl tab (wL L).val (2 * t1.val) (2 * k.val + 1) 1 _ (hRB _) ⟨39, by decide⟩ ⟨0, by decide⟩ _ rfl _ hwB_39 _ (k1_off43_form ⟨2, by decide⟩ _ _) _ hc16
    have sB0_40 : addf (AccMath.accVec (rowF fl tab (wL L).val (2 * t1.val) (2 * k.val + 1)) (offF fl (wL L).val (2 * t1.val) (2 * k.val + 1)) 0 40) (shapeCast S16 (pair0_last.sl.v1961_5 d L tab t1 k r g1 g2 hR hin h5) hc16) = AccMath.accVec (rowF fl tab (wL L).val (2 * t1.val) (2 * k.val + 1)) (offF fl (wL L).val (2 * t1.val) (2 * k.val + 1)) 0 41 :=
      acc_step d L fl tab (wL L).val (2 * t1.val) (2 * k.val + 1) 1 _ (hRB _) ⟨40, by decide⟩ ⟨0, by decide⟩ _ rfl _ hwB_40 _ (k1_off44_form ⟨2, by decide⟩ _ _) _ hc16
    have sB0_41 : addf (AccMath.accVec (rowF fl tab (wL L).val (2 * t1.val) (2 * k.val + 1)) (offF fl (wL L).val (2 * t1.val) (2 * k.val + 1)) 0 41) (shapeCast S16 (pair0_last.sl.v1997_5 d L tab t1 k r g1 g2 hR hin h5) hc16) = AccMath.accVec (rowF fl tab (wL L).val (2 * t1.val) (2 * k.val + 1)) (offF fl (wL L).val (2 * t1.val) (2 * k.val + 1)) 0 42 :=
      acc_step d L fl tab (wL L).val (2 * t1.val) (2 * k.val + 1) 1 _ (hRB _) ⟨41, by decide⟩ ⟨0, by decide⟩ _ rfl _ hwB_41 _ (k1_off45_form ⟨2, by decide⟩ _ _) _ hc16
    have sB0_42 : addf (AccMath.accVec (rowF fl tab (wL L).val (2 * t1.val) (2 * k.val + 1)) (offF fl (wL L).val (2 * t1.val) (2 * k.val + 1)) 0 42) (shapeCast S16 (pair0_last.sl.v2033_5 d L tab t1 k r g1 g2 hR hin h5) hc16) = AccMath.accVec (rowF fl tab (wL L).val (2 * t1.val) (2 * k.val + 1)) (offF fl (wL L).val (2 * t1.val) (2 * k.val + 1)) 0 43 :=
      acc_step d L fl tab (wL L).val (2 * t1.val) (2 * k.val + 1) 1 _ (hRB _) ⟨42, by decide⟩ ⟨0, by decide⟩ _ rfl _ hwB_42 _ (k1_off46_form ⟨2, by decide⟩ _ _) _ hc16
    have sB0_43 : addf (AccMath.accVec (rowF fl tab (wL L).val (2 * t1.val) (2 * k.val + 1)) (offF fl (wL L).val (2 * t1.val) (2 * k.val + 1)) 0 43) (shapeCast S16 (pair0_last.sl.v2069_5 d L tab t1 k r g1 g2 hR hin h5) hc16) = AccMath.accVec (rowF fl tab (wL L).val (2 * t1.val) (2 * k.val + 1)) (offF fl (wL L).val (2 * t1.val) (2 * k.val + 1)) 0 44 :=
      acc_step d L fl tab (wL L).val (2 * t1.val) (2 * k.val + 1) 1 _ (hRB _) ⟨43, by decide⟩ ⟨0, by decide⟩ _ rfl _ hwB_43 _ (k1_off47_form ⟨2, by decide⟩ _ _) _ hc16
    have sB0_44 : addf (AccMath.accVec (rowF fl tab (wL L).val (2 * t1.val) (2 * k.val + 1)) (offF fl (wL L).val (2 * t1.val) (2 * k.val + 1)) 0 44) (shapeCast S16 (pair0_last.sl.v2105_5 d L tab t1 k r g1 g2 hR hin h5) hc16) = AccMath.accVec (rowF fl tab (wL L).val (2 * t1.val) (2 * k.val + 1)) (offF fl (wL L).val (2 * t1.val) (2 * k.val + 1)) 0 45 :=
      acc_step d L fl tab (wL L).val (2 * t1.val) (2 * k.val + 1) 1 _ (hRB _) ⟨44, by decide⟩ ⟨0, by decide⟩ _ rfl _ hwB_44 _ (k1_off48_form ⟨2, by decide⟩ _ _) _ hc16
    have sB0_45 : addf (AccMath.accVec (rowF fl tab (wL L).val (2 * t1.val) (2 * k.val + 1)) (offF fl (wL L).val (2 * t1.val) (2 * k.val + 1)) 0 45) (shapeCast S16 (pair0_last.sl.v2141_5 d L tab t1 k r g1 g2 hR hin h5) hc16) = AccMath.accVec (rowF fl tab (wL L).val (2 * t1.val) (2 * k.val + 1)) (offF fl (wL L).val (2 * t1.val) (2 * k.val + 1)) 0 46 :=
      acc_step d L fl tab (wL L).val (2 * t1.val) (2 * k.val + 1) 1 _ (hRB _) ⟨45, by decide⟩ ⟨0, by decide⟩ _ rfl _ hwB_45 _ (k1_off49_form ⟨2, by decide⟩ _ _) _ hc16
    have sB0_46 : addf (AccMath.accVec (rowF fl tab (wL L).val (2 * t1.val) (2 * k.val + 1)) (offF fl (wL L).val (2 * t1.val) (2 * k.val + 1)) 0 46) (shapeCast S16 (pair0_last.sl.v2177_5 d L tab t1 k r g1 g2 hR hin h5) hc16) = AccMath.accVec (rowF fl tab (wL L).val (2 * t1.val) (2 * k.val + 1)) (offF fl (wL L).val (2 * t1.val) (2 * k.val + 1)) 0 47 :=
      acc_step d L fl tab (wL L).val (2 * t1.val) (2 * k.val + 1) 1 _ (hRB _) ⟨46, by decide⟩ ⟨0, by decide⟩ _ rfl _ hwB_46 _ (k1_off50_form ⟨2, by decide⟩ _ _) _ hc16
    have sB0_47 : addf (AccMath.accVec (rowF fl tab (wL L).val (2 * t1.val) (2 * k.val + 1)) (offF fl (wL L).val (2 * t1.val) (2 * k.val + 1)) 0 47) (shapeCast S16 (pair0_last.sl.v2213_5 d L tab t1 k r g1 g2 hR hin h5) hc16) = AccMath.accVec (rowF fl tab (wL L).val (2 * t1.val) (2 * k.val + 1)) (offF fl (wL L).val (2 * t1.val) (2 * k.val + 1)) 0 48 :=
      acc_step d L fl tab (wL L).val (2 * t1.val) (2 * k.val + 1) 1 _ (hRB _) ⟨47, by decide⟩ ⟨0, by decide⟩ _ rfl _ hwB_47 _ (k1_off51_form ⟨2, by decide⟩ _ _) _ hc16
    have sB0_48 : addf (AccMath.accVec (rowF fl tab (wL L).val (2 * t1.val) (2 * k.val + 1)) (offF fl (wL L).val (2 * t1.val) (2 * k.val + 1)) 0 48) (shapeCast S16 (pair0_last.sl.v1578 d L tab t1 k r g1 g2 hR hin h5) hc16) = AccMath.accVec (rowF fl tab (wL L).val (2 * t1.val) (2 * k.val + 1)) (offF fl (wL L).val (2 * t1.val) (2 * k.val + 1)) 0 49 :=
      acc_step d L fl tab (wL L).val (2 * t1.val) (2 * k.val + 1) 1 _ (hRB _) ⟨48, by decide⟩ ⟨0, by decide⟩ _ rfl _ hwB_48 _ (k1_off53_form _ _) _ hc16
    have sB0_49 : addf (AccMath.accVec (rowF fl tab (wL L).val (2 * t1.val) (2 * k.val + 1)) (offF fl (wL L).val (2 * t1.val) (2 * k.val + 1)) 0 49) (shapeCast S16 (pair0_last.sl.v1612 d L tab t1 k r g1 g2 hR hin h5) hc16) = AccMath.accVec (rowF fl tab (wL L).val (2 * t1.val) (2 * k.val + 1)) (offF fl (wL L).val (2 * t1.val) (2 * k.val + 1)) 0 50 :=
      acc_step d L fl tab (wL L).val (2 * t1.val) (2 * k.val + 1) 1 _ (hRB _) ⟨49, by decide⟩ ⟨0, by decide⟩ _ rfl _ hwB_49 _ (k1_off54_form _ _) _ hc16
    have hPB0 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val + 1)) (offF fl (wL L).val (2 * t1.val) (2 * k.val + 1)) 0 0) (shapeCast S16 (pair0_last.sl.v1673_3 d L tab t1 k r g1 g2 hR hin h5) hc16)) (shapeCast S16 (pair0_last.sl.v1709_3 d L tab t1 k r g1 g2 hR hin h5) hc16)) (shapeCast S16 (pair0_last.sl.v1745_3 d L tab t1 k r g1 g2 hR hin h5) hc16)) (shapeCast S16 (pair0_last.sl.v1781_3 d L tab t1 k r g1 g2 hR hin h5) hc16)) (shapeCast S16 (pair0_last.sl.v1817_3 d L tab t1 k r g1 g2 hR hin h5) hc16)) (shapeCast S16 (pair0_last.sl.v1853_3 d L tab t1 k r g1 g2 hR hin h5) hc16)) (shapeCast S16 (pair0_last.sl.v1889_3 d L tab t1 k r g1 g2 hR hin h5) hc16)) (shapeCast S16 (pair0_last.sl.v1925_3 d L tab t1 k r g1 g2 hR hin h5) hc16)) (shapeCast S16 (pair0_last.sl.v1961_3 d L tab t1 k r g1 g2 hR hin h5) hc16)) (shapeCast S16 (pair0_last.sl.v1997_3 d L tab t1 k r g1 g2 hR hin h5) hc16)) (shapeCast S16 (pair0_last.sl.v2033_3 d L tab t1 k r g1 g2 hR hin h5) hc16)) (shapeCast S16 (pair0_last.sl.v2069_3 d L tab t1 k r g1 g2 hR hin h5) hc16)) (shapeCast S16 (pair0_last.sl.v2105_3 d L tab t1 k r g1 g2 hR hin h5) hc16)) (shapeCast S16 (pair0_last.sl.v2141_3 d L tab t1 k r g1 g2 hR hin h5) hc16)) (shapeCast S16 (pair0_last.sl.v2177_3 d L tab t1 k r g1 g2 hR hin h5) hc16)) (shapeCast S16 (pair0_last.sl.v2213_3 d L tab t1 k r g1 g2 hR hin h5) hc16)) (shapeCast S16 (pair0_last.sl.v1673_4 d L tab t1 k r g1 g2 hR hin h5) hc16)) (shapeCast S16 (pair0_last.sl.v1709_4 d L tab t1 k r g1 g2 hR hin h5) hc16)) (shapeCast S16 (pair0_last.sl.v1745_4 d L tab t1 k r g1 g2 hR hin h5) hc16)) (shapeCast S16 (pair0_last.sl.v1781_4 d L tab t1 k r g1 g2 hR hin h5) hc16)) (shapeCast S16 (pair0_last.sl.v1817_4 d L tab t1 k r g1 g2 hR hin h5) hc16)) (shapeCast S16 (pair0_last.sl.v1853_4 d L tab t1 k r g1 g2 hR hin h5) hc16)) (shapeCast S16 (pair0_last.sl.v1889_4 d L tab t1 k r g1 g2 hR hin h5) hc16)) (shapeCast S16 (pair0_last.sl.v1925_4 d L tab t1 k r g1 g2 hR hin h5) hc16)) (shapeCast S16 (pair0_last.sl.v1961_4 d L tab t1 k r g1 g2 hR hin h5) hc16)) (shapeCast S16 (pair0_last.sl.v1997_4 d L tab t1 k r g1 g2 hR hin h5) hc16)) (shapeCast S16 (pair0_last.sl.v2033_4 d L tab t1 k r g1 g2 hR hin h5) hc16)) (shapeCast S16 (pair0_last.sl.v2069_4 d L tab t1 k r g1 g2 hR hin h5) hc16)) (shapeCast S16 (pair0_last.sl.v2105_4 d L tab t1 k r g1 g2 hR hin h5) hc16)) (shapeCast S16 (pair0_last.sl.v2141_4 d L tab t1 k r g1 g2 hR hin h5) hc16)) (shapeCast S16 (pair0_last.sl.v2177_4 d L tab t1 k r g1 g2 hR hin h5) hc16)) (shapeCast S16 (pair0_last.sl.v2213_4 d L tab t1 k r g1 g2 hR hin h5) hc16)) (shapeCast S16 (pair0_last.sl.v1673_5 d L tab t1 k r g1 g2 hR hin h5) hc16)) (shapeCast S16 (pair0_last.sl.v1709_5 d L tab t1 k r g1 g2 hR hin h5) hc16)) (shapeCast S16 (pair0_last.sl.v1745_5 d L tab t1 k r g1 g2 hR hin h5) hc16)) (shapeCast S16 (pair0_last.sl.v1781_5 d L tab t1 k r g1 g2 hR hin h5) hc16)) (shapeCast S16 (pair0_last.sl.v1817_5 d L tab t1 k r g1 g2 hR hin h5) hc16)) (shapeCast S16 (pair0_last.sl.v1853_5 d L tab t1 k r g1 g2 hR hin h5) hc16)) (shapeCast S16 (pair0_last.sl.v1889_5 d L tab t1 k r g1 g2 hR hin h5) hc16)) (shapeCast S16 (pair0_last.sl.v1925_5 d L tab t1 k r g1 g2 hR hin h5) hc16)) (shapeCast S16 (pair0_last.sl.v1961_5 d L tab t1 k r g1 g2 hR hin h5) hc16)) (shapeCast S16 (pair0_last.sl.v1997_5 d L tab t1 k r g1 g2 hR hin h5) hc16)) (shapeCast S16 (pair0_last.sl.v2033_5 d L tab t1 k r g1 g2 hR hin h5) hc16)) (shapeCast S16 (pair0_last.sl.v2069_5 d L tab t1 k r g1 g2 hR hin h5) hc16)) (shapeCast S16 (pair0_last.sl.v2105_5 d L tab t1 k r g1 g2 hR hin h5) hc16)) (shapeCast S16 (pair0_last.sl.v2141_5 d L tab t1 k r g1 g2 hR hin h5) hc16)) (shapeCast S16 (pair0_last.sl.v2177_5 d L tab t1 k r g1 g2 hR hin h5) hc16)) (shapeCast S16 (pair0_last.sl.v2213_5 d L tab t1 k r g1 g2 hR hin h5) hc16)) (shapeCast S16 (pair0_last.sl.v1578 d L tab t1 k r g1 g2 hR hin h5) hc16)) (shapeCast S16 (pair0_last.sl.v1612 d L tab t1 k r g1 g2 hR hin h5) hc16)) hc1 x = Spec.bagPartial fl tab (128 * (wL L).val + 16 * (2 * t1.val) + (2 * k.val + 1)) (16 * 0 + (x 2).val) 50 := fun x => by
      rw [sB0_0, sB0_1, sB0_2, sB0_3, sB0_4, sB0_5, sB0_6, sB0_7, sB0_8, sB0_9, sB0_10, sB0_11, sB0_12, sB0_13, sB0_14, sB0_15, sB0_16, sB0_17, sB0_18, sB0_19, sB0_20, sB0_21, sB0_22, sB0_23, sB0_24, sB0_25, sB0_26, sB0_27, sB0_28, sB0_29, sB0_30, sB0_31, sB0_32, sB0_33, sB0_34, sB0_35, sB0_36, sB0_37, sB0_38, sB0_39, sB0_40, sB0_41, sB0_42, sB0_43, sB0_44, sB0_45, sB0_46, sB0_47, sB0_48, sB0_49]; exact payload_ok fl tab (wL L).val (2 * t1.val) (2 * k.val + 1) ⟨0, by decide⟩ hc1 x
    have sB1_0 : addf (AccMath.accVec (rowF fl tab (wL L).val (2 * t1.val) (2 * k.val + 1)) (offF fl (wL L).val (2 * t1.val) (2 * k.val + 1)) 1 0) (shapeCast S16 (pair0_last.sl.v1681_3 d L tab t1 k r g1 g2 hR hin h5) hc16) = AccMath.accVec (rowF fl tab (wL L).val (2 * t1.val) (2 * k.val + 1)) (offF fl (wL L).val (2 * t1.val) (2 * k.val + 1)) 1 1 :=
      acc_step d L fl tab (wL L).val (2 * t1.val) (2 * k.val + 1) 1 _ (hRB _) ⟨0, by decide⟩ ⟨1, by decide⟩ _ rfl _ hwB_0 _ (k1_off36_form ⟨0, by decide⟩ _ _) _ hc16
    have sB1_1 : addf (AccMath.accVec (rowF fl tab (wL L).val (2 * t1.val) (2 * k.val + 1)) (offF fl (wL L).val (2 * t1.val) (2 * k.val + 1)) 1 1) (shapeCast S16 (pair0_last.sl.v1717_3 d L tab t1 k r g1 g2 hR hin h5) hc16) = AccMath.accVec (rowF fl tab (wL L).val (2 * t1.val) (2 * k.val + 1)) (offF fl (wL L).val (2 * t1.val) (2 * k.val + 1)) 1 2 :=
      acc_step d L fl tab (wL L).val (2 * t1.val) (2 * k.val + 1) 1 _ (hRB _) ⟨1, by decide⟩ ⟨1, by decide⟩ _ rfl _ hwB_1 _ (k1_off37_form ⟨0, by decide⟩ _ _) _ hc16
    have sB1_2 : addf (AccMath.accVec (rowF fl tab (wL L).val (2 * t1.val) (2 * k.val + 1)) (offF fl (wL L).val (2 * t1.val) (2 * k.val + 1)) 1 2) (shapeCast S16 (pair0_last.sl.v1753_3 d L tab t1 k r g1 g2 hR hin h5) hc16) = AccMath.accVec (rowF fl tab (wL L).val (2 * t1.val) (2 * k.val + 1)) (offF fl (wL L).val (2 * t1.val) (2 * k.val + 1)) 1 3 :=
      acc_step d L fl tab (wL L).val (2 * t1.val) (2 * k.val + 1) 1 _ (hRB _) ⟨2, by decide⟩ ⟨1, by decide⟩ _ rfl _ hwB_2 _ (k1_off38_form ⟨0, by decide⟩ _ _) _ hc16
    have sB1_3 : addf (AccMath.accVec (rowF fl tab (wL L).val (2 * t1.val) (2 * k.val + 1)) (offF fl (wL L).val (2 * t1.val) (2 * k.val + 1)) 1 3) (shapeCast S16 (pair0_last.sl.v1789_3 d L tab t1 k r g1 g2 hR hin h5) hc16) = AccMath.accVec (rowF fl tab (wL L).val (2 * t1.val) (2 * k.val + 1)) (offF fl (wL L).val (2 * t1.val) (2 * k.val + 1)) 1 4 :=
      acc_step d L fl tab (wL L).val (2 * t1.val) (2 * k.val + 1) 1 _ (hRB _) ⟨3, by decide⟩ ⟨1, by decide⟩ _ rfl _ hwB_3 _ (k1_off39_form ⟨0, by decide⟩ _ _) _ hc16
    have sB1_4 : addf (AccMath.accVec (rowF fl tab (wL L).val (2 * t1.val) (2 * k.val + 1)) (offF fl (wL L).val (2 * t1.val) (2 * k.val + 1)) 1 4) (shapeCast S16 (pair0_last.sl.v1825_3 d L tab t1 k r g1 g2 hR hin h5) hc16) = AccMath.accVec (rowF fl tab (wL L).val (2 * t1.val) (2 * k.val + 1)) (offF fl (wL L).val (2 * t1.val) (2 * k.val + 1)) 1 5 :=
      acc_step d L fl tab (wL L).val (2 * t1.val) (2 * k.val + 1) 1 _ (hRB _) ⟨4, by decide⟩ ⟨1, by decide⟩ _ rfl _ hwB_4 _ (k1_off40_form ⟨0, by decide⟩ _ _) _ hc16
    have sB1_5 : addf (AccMath.accVec (rowF fl tab (wL L).val (2 * t1.val) (2 * k.val + 1)) (offF fl (wL L).val (2 * t1.val) (2 * k.val + 1)) 1 5) (shapeCast S16 (pair0_last.sl.v1861_3 d L tab t1 k r g1 g2 hR hin h5) hc16) = AccMath.accVec (rowF fl tab (wL L).val (2 * t1.val) (2 * k.val + 1)) (offF fl (wL L).val (2 * t1.val) (2 * k.val + 1)) 1 6 :=
      acc_step d L fl tab (wL L).val (2 * t1.val) (2 * k.val + 1) 1 _ (hRB _) ⟨5, by decide⟩ ⟨1, by decide⟩ _ rfl _ hwB_5 _ (k1_off41_form ⟨0, by decide⟩ _ _) _ hc16
    have sB1_6 : addf (AccMath.accVec (rowF fl tab (wL L).val (2 * t1.val) (2 * k.val + 1)) (offF fl (wL L).val (2 * t1.val) (2 * k.val + 1)) 1 6) (shapeCast S16 (pair0_last.sl.v1897_3 d L tab t1 k r g1 g2 hR hin h5) hc16) = AccMath.accVec (rowF fl tab (wL L).val (2 * t1.val) (2 * k.val + 1)) (offF fl (wL L).val (2 * t1.val) (2 * k.val + 1)) 1 7 :=
      acc_step d L fl tab (wL L).val (2 * t1.val) (2 * k.val + 1) 1 _ (hRB _) ⟨6, by decide⟩ ⟨1, by decide⟩ _ rfl _ hwB_6 _ (k1_off42_form ⟨0, by decide⟩ _ _) _ hc16
    have sB1_7 : addf (AccMath.accVec (rowF fl tab (wL L).val (2 * t1.val) (2 * k.val + 1)) (offF fl (wL L).val (2 * t1.val) (2 * k.val + 1)) 1 7) (shapeCast S16 (pair0_last.sl.v1933_3 d L tab t1 k r g1 g2 hR hin h5) hc16) = AccMath.accVec (rowF fl tab (wL L).val (2 * t1.val) (2 * k.val + 1)) (offF fl (wL L).val (2 * t1.val) (2 * k.val + 1)) 1 8 :=
      acc_step d L fl tab (wL L).val (2 * t1.val) (2 * k.val + 1) 1 _ (hRB _) ⟨7, by decide⟩ ⟨1, by decide⟩ _ rfl _ hwB_7 _ (k1_off43_form ⟨0, by decide⟩ _ _) _ hc16
    have sB1_8 : addf (AccMath.accVec (rowF fl tab (wL L).val (2 * t1.val) (2 * k.val + 1)) (offF fl (wL L).val (2 * t1.val) (2 * k.val + 1)) 1 8) (shapeCast S16 (pair0_last.sl.v1969_3 d L tab t1 k r g1 g2 hR hin h5) hc16) = AccMath.accVec (rowF fl tab (wL L).val (2 * t1.val) (2 * k.val + 1)) (offF fl (wL L).val (2 * t1.val) (2 * k.val + 1)) 1 9 :=
      acc_step d L fl tab (wL L).val (2 * t1.val) (2 * k.val + 1) 1 _ (hRB _) ⟨8, by decide⟩ ⟨1, by decide⟩ _ rfl _ hwB_8 _ (k1_off44_form ⟨0, by decide⟩ _ _) _ hc16
    have sB1_9 : addf (AccMath.accVec (rowF fl tab (wL L).val (2 * t1.val) (2 * k.val + 1)) (offF fl (wL L).val (2 * t1.val) (2 * k.val + 1)) 1 9) (shapeCast S16 (pair0_last.sl.v2005_3 d L tab t1 k r g1 g2 hR hin h5) hc16) = AccMath.accVec (rowF fl tab (wL L).val (2 * t1.val) (2 * k.val + 1)) (offF fl (wL L).val (2 * t1.val) (2 * k.val + 1)) 1 10 :=
      acc_step d L fl tab (wL L).val (2 * t1.val) (2 * k.val + 1) 1 _ (hRB _) ⟨9, by decide⟩ ⟨1, by decide⟩ _ rfl _ hwB_9 _ (k1_off45_form ⟨0, by decide⟩ _ _) _ hc16
    have sB1_10 : addf (AccMath.accVec (rowF fl tab (wL L).val (2 * t1.val) (2 * k.val + 1)) (offF fl (wL L).val (2 * t1.val) (2 * k.val + 1)) 1 10) (shapeCast S16 (pair0_last.sl.v2041_3 d L tab t1 k r g1 g2 hR hin h5) hc16) = AccMath.accVec (rowF fl tab (wL L).val (2 * t1.val) (2 * k.val + 1)) (offF fl (wL L).val (2 * t1.val) (2 * k.val + 1)) 1 11 :=
      acc_step d L fl tab (wL L).val (2 * t1.val) (2 * k.val + 1) 1 _ (hRB _) ⟨10, by decide⟩ ⟨1, by decide⟩ _ rfl _ hwB_10 _ (k1_off46_form ⟨0, by decide⟩ _ _) _ hc16
    have sB1_11 : addf (AccMath.accVec (rowF fl tab (wL L).val (2 * t1.val) (2 * k.val + 1)) (offF fl (wL L).val (2 * t1.val) (2 * k.val + 1)) 1 11) (shapeCast S16 (pair0_last.sl.v2077_3 d L tab t1 k r g1 g2 hR hin h5) hc16) = AccMath.accVec (rowF fl tab (wL L).val (2 * t1.val) (2 * k.val + 1)) (offF fl (wL L).val (2 * t1.val) (2 * k.val + 1)) 1 12 :=
      acc_step d L fl tab (wL L).val (2 * t1.val) (2 * k.val + 1) 1 _ (hRB _) ⟨11, by decide⟩ ⟨1, by decide⟩ _ rfl _ hwB_11 _ (k1_off47_form ⟨0, by decide⟩ _ _) _ hc16
    have sB1_12 : addf (AccMath.accVec (rowF fl tab (wL L).val (2 * t1.val) (2 * k.val + 1)) (offF fl (wL L).val (2 * t1.val) (2 * k.val + 1)) 1 12) (shapeCast S16 (pair0_last.sl.v2113_3 d L tab t1 k r g1 g2 hR hin h5) hc16) = AccMath.accVec (rowF fl tab (wL L).val (2 * t1.val) (2 * k.val + 1)) (offF fl (wL L).val (2 * t1.val) (2 * k.val + 1)) 1 13 :=
      acc_step d L fl tab (wL L).val (2 * t1.val) (2 * k.val + 1) 1 _ (hRB _) ⟨12, by decide⟩ ⟨1, by decide⟩ _ rfl _ hwB_12 _ (k1_off48_form ⟨0, by decide⟩ _ _) _ hc16
    have sB1_13 : addf (AccMath.accVec (rowF fl tab (wL L).val (2 * t1.val) (2 * k.val + 1)) (offF fl (wL L).val (2 * t1.val) (2 * k.val + 1)) 1 13) (shapeCast S16 (pair0_last.sl.v2149_3 d L tab t1 k r g1 g2 hR hin h5) hc16) = AccMath.accVec (rowF fl tab (wL L).val (2 * t1.val) (2 * k.val + 1)) (offF fl (wL L).val (2 * t1.val) (2 * k.val + 1)) 1 14 :=
      acc_step d L fl tab (wL L).val (2 * t1.val) (2 * k.val + 1) 1 _ (hRB _) ⟨13, by decide⟩ ⟨1, by decide⟩ _ rfl _ hwB_13 _ (k1_off49_form ⟨0, by decide⟩ _ _) _ hc16
    have sB1_14 : addf (AccMath.accVec (rowF fl tab (wL L).val (2 * t1.val) (2 * k.val + 1)) (offF fl (wL L).val (2 * t1.val) (2 * k.val + 1)) 1 14) (shapeCast S16 (pair0_last.sl.v2185_3 d L tab t1 k r g1 g2 hR hin h5) hc16) = AccMath.accVec (rowF fl tab (wL L).val (2 * t1.val) (2 * k.val + 1)) (offF fl (wL L).val (2 * t1.val) (2 * k.val + 1)) 1 15 :=
      acc_step d L fl tab (wL L).val (2 * t1.val) (2 * k.val + 1) 1 _ (hRB _) ⟨14, by decide⟩ ⟨1, by decide⟩ _ rfl _ hwB_14 _ (k1_off50_form ⟨0, by decide⟩ _ _) _ hc16
    have sB1_15 : addf (AccMath.accVec (rowF fl tab (wL L).val (2 * t1.val) (2 * k.val + 1)) (offF fl (wL L).val (2 * t1.val) (2 * k.val + 1)) 1 15) (shapeCast S16 (pair0_last.sl.v2221_3 d L tab t1 k r g1 g2 hR hin h5) hc16) = AccMath.accVec (rowF fl tab (wL L).val (2 * t1.val) (2 * k.val + 1)) (offF fl (wL L).val (2 * t1.val) (2 * k.val + 1)) 1 16 :=
      acc_step d L fl tab (wL L).val (2 * t1.val) (2 * k.val + 1) 1 _ (hRB _) ⟨15, by decide⟩ ⟨1, by decide⟩ _ rfl _ hwB_15 _ (k1_off51_form ⟨0, by decide⟩ _ _) _ hc16
    have sB1_16 : addf (AccMath.accVec (rowF fl tab (wL L).val (2 * t1.val) (2 * k.val + 1)) (offF fl (wL L).val (2 * t1.val) (2 * k.val + 1)) 1 16) (shapeCast S16 (pair0_last.sl.v1681_4 d L tab t1 k r g1 g2 hR hin h5) hc16) = AccMath.accVec (rowF fl tab (wL L).val (2 * t1.val) (2 * k.val + 1)) (offF fl (wL L).val (2 * t1.val) (2 * k.val + 1)) 1 17 :=
      acc_step d L fl tab (wL L).val (2 * t1.val) (2 * k.val + 1) 1 _ (hRB _) ⟨16, by decide⟩ ⟨1, by decide⟩ _ rfl _ hwB_16 _ (k1_off36_form ⟨1, by decide⟩ _ _) _ hc16
    have sB1_17 : addf (AccMath.accVec (rowF fl tab (wL L).val (2 * t1.val) (2 * k.val + 1)) (offF fl (wL L).val (2 * t1.val) (2 * k.val + 1)) 1 17) (shapeCast S16 (pair0_last.sl.v1717_4 d L tab t1 k r g1 g2 hR hin h5) hc16) = AccMath.accVec (rowF fl tab (wL L).val (2 * t1.val) (2 * k.val + 1)) (offF fl (wL L).val (2 * t1.val) (2 * k.val + 1)) 1 18 :=
      acc_step d L fl tab (wL L).val (2 * t1.val) (2 * k.val + 1) 1 _ (hRB _) ⟨17, by decide⟩ ⟨1, by decide⟩ _ rfl _ hwB_17 _ (k1_off37_form ⟨1, by decide⟩ _ _) _ hc16
    have sB1_18 : addf (AccMath.accVec (rowF fl tab (wL L).val (2 * t1.val) (2 * k.val + 1)) (offF fl (wL L).val (2 * t1.val) (2 * k.val + 1)) 1 18) (shapeCast S16 (pair0_last.sl.v1753_4 d L tab t1 k r g1 g2 hR hin h5) hc16) = AccMath.accVec (rowF fl tab (wL L).val (2 * t1.val) (2 * k.val + 1)) (offF fl (wL L).val (2 * t1.val) (2 * k.val + 1)) 1 19 :=
      acc_step d L fl tab (wL L).val (2 * t1.val) (2 * k.val + 1) 1 _ (hRB _) ⟨18, by decide⟩ ⟨1, by decide⟩ _ rfl _ hwB_18 _ (k1_off38_form ⟨1, by decide⟩ _ _) _ hc16
    have sB1_19 : addf (AccMath.accVec (rowF fl tab (wL L).val (2 * t1.val) (2 * k.val + 1)) (offF fl (wL L).val (2 * t1.val) (2 * k.val + 1)) 1 19) (shapeCast S16 (pair0_last.sl.v1789_4 d L tab t1 k r g1 g2 hR hin h5) hc16) = AccMath.accVec (rowF fl tab (wL L).val (2 * t1.val) (2 * k.val + 1)) (offF fl (wL L).val (2 * t1.val) (2 * k.val + 1)) 1 20 :=
      acc_step d L fl tab (wL L).val (2 * t1.val) (2 * k.val + 1) 1 _ (hRB _) ⟨19, by decide⟩ ⟨1, by decide⟩ _ rfl _ hwB_19 _ (k1_off39_form ⟨1, by decide⟩ _ _) _ hc16
    have sB1_20 : addf (AccMath.accVec (rowF fl tab (wL L).val (2 * t1.val) (2 * k.val + 1)) (offF fl (wL L).val (2 * t1.val) (2 * k.val + 1)) 1 20) (shapeCast S16 (pair0_last.sl.v1825_4 d L tab t1 k r g1 g2 hR hin h5) hc16) = AccMath.accVec (rowF fl tab (wL L).val (2 * t1.val) (2 * k.val + 1)) (offF fl (wL L).val (2 * t1.val) (2 * k.val + 1)) 1 21 :=
      acc_step d L fl tab (wL L).val (2 * t1.val) (2 * k.val + 1) 1 _ (hRB _) ⟨20, by decide⟩ ⟨1, by decide⟩ _ rfl _ hwB_20 _ (k1_off40_form ⟨1, by decide⟩ _ _) _ hc16
    have sB1_21 : addf (AccMath.accVec (rowF fl tab (wL L).val (2 * t1.val) (2 * k.val + 1)) (offF fl (wL L).val (2 * t1.val) (2 * k.val + 1)) 1 21) (shapeCast S16 (pair0_last.sl.v1861_4 d L tab t1 k r g1 g2 hR hin h5) hc16) = AccMath.accVec (rowF fl tab (wL L).val (2 * t1.val) (2 * k.val + 1)) (offF fl (wL L).val (2 * t1.val) (2 * k.val + 1)) 1 22 :=
      acc_step d L fl tab (wL L).val (2 * t1.val) (2 * k.val + 1) 1 _ (hRB _) ⟨21, by decide⟩ ⟨1, by decide⟩ _ rfl _ hwB_21 _ (k1_off41_form ⟨1, by decide⟩ _ _) _ hc16
    have sB1_22 : addf (AccMath.accVec (rowF fl tab (wL L).val (2 * t1.val) (2 * k.val + 1)) (offF fl (wL L).val (2 * t1.val) (2 * k.val + 1)) 1 22) (shapeCast S16 (pair0_last.sl.v1897_4 d L tab t1 k r g1 g2 hR hin h5) hc16) = AccMath.accVec (rowF fl tab (wL L).val (2 * t1.val) (2 * k.val + 1)) (offF fl (wL L).val (2 * t1.val) (2 * k.val + 1)) 1 23 :=
      acc_step d L fl tab (wL L).val (2 * t1.val) (2 * k.val + 1) 1 _ (hRB _) ⟨22, by decide⟩ ⟨1, by decide⟩ _ rfl _ hwB_22 _ (k1_off42_form ⟨1, by decide⟩ _ _) _ hc16
    have sB1_23 : addf (AccMath.accVec (rowF fl tab (wL L).val (2 * t1.val) (2 * k.val + 1)) (offF fl (wL L).val (2 * t1.val) (2 * k.val + 1)) 1 23) (shapeCast S16 (pair0_last.sl.v1933_4 d L tab t1 k r g1 g2 hR hin h5) hc16) = AccMath.accVec (rowF fl tab (wL L).val (2 * t1.val) (2 * k.val + 1)) (offF fl (wL L).val (2 * t1.val) (2 * k.val + 1)) 1 24 :=
      acc_step d L fl tab (wL L).val (2 * t1.val) (2 * k.val + 1) 1 _ (hRB _) ⟨23, by decide⟩ ⟨1, by decide⟩ _ rfl _ hwB_23 _ (k1_off43_form ⟨1, by decide⟩ _ _) _ hc16
    have sB1_24 : addf (AccMath.accVec (rowF fl tab (wL L).val (2 * t1.val) (2 * k.val + 1)) (offF fl (wL L).val (2 * t1.val) (2 * k.val + 1)) 1 24) (shapeCast S16 (pair0_last.sl.v1969_4 d L tab t1 k r g1 g2 hR hin h5) hc16) = AccMath.accVec (rowF fl tab (wL L).val (2 * t1.val) (2 * k.val + 1)) (offF fl (wL L).val (2 * t1.val) (2 * k.val + 1)) 1 25 :=
      acc_step d L fl tab (wL L).val (2 * t1.val) (2 * k.val + 1) 1 _ (hRB _) ⟨24, by decide⟩ ⟨1, by decide⟩ _ rfl _ hwB_24 _ (k1_off44_form ⟨1, by decide⟩ _ _) _ hc16
    have sB1_25 : addf (AccMath.accVec (rowF fl tab (wL L).val (2 * t1.val) (2 * k.val + 1)) (offF fl (wL L).val (2 * t1.val) (2 * k.val + 1)) 1 25) (shapeCast S16 (pair0_last.sl.v2005_4 d L tab t1 k r g1 g2 hR hin h5) hc16) = AccMath.accVec (rowF fl tab (wL L).val (2 * t1.val) (2 * k.val + 1)) (offF fl (wL L).val (2 * t1.val) (2 * k.val + 1)) 1 26 :=
      acc_step d L fl tab (wL L).val (2 * t1.val) (2 * k.val + 1) 1 _ (hRB _) ⟨25, by decide⟩ ⟨1, by decide⟩ _ rfl _ hwB_25 _ (k1_off45_form ⟨1, by decide⟩ _ _) _ hc16
    have sB1_26 : addf (AccMath.accVec (rowF fl tab (wL L).val (2 * t1.val) (2 * k.val + 1)) (offF fl (wL L).val (2 * t1.val) (2 * k.val + 1)) 1 26) (shapeCast S16 (pair0_last.sl.v2041_4 d L tab t1 k r g1 g2 hR hin h5) hc16) = AccMath.accVec (rowF fl tab (wL L).val (2 * t1.val) (2 * k.val + 1)) (offF fl (wL L).val (2 * t1.val) (2 * k.val + 1)) 1 27 :=
      acc_step d L fl tab (wL L).val (2 * t1.val) (2 * k.val + 1) 1 _ (hRB _) ⟨26, by decide⟩ ⟨1, by decide⟩ _ rfl _ hwB_26 _ (k1_off46_form ⟨1, by decide⟩ _ _) _ hc16
    have sB1_27 : addf (AccMath.accVec (rowF fl tab (wL L).val (2 * t1.val) (2 * k.val + 1)) (offF fl (wL L).val (2 * t1.val) (2 * k.val + 1)) 1 27) (shapeCast S16 (pair0_last.sl.v2077_4 d L tab t1 k r g1 g2 hR hin h5) hc16) = AccMath.accVec (rowF fl tab (wL L).val (2 * t1.val) (2 * k.val + 1)) (offF fl (wL L).val (2 * t1.val) (2 * k.val + 1)) 1 28 :=
      acc_step d L fl tab (wL L).val (2 * t1.val) (2 * k.val + 1) 1 _ (hRB _) ⟨27, by decide⟩ ⟨1, by decide⟩ _ rfl _ hwB_27 _ (k1_off47_form ⟨1, by decide⟩ _ _) _ hc16
    have sB1_28 : addf (AccMath.accVec (rowF fl tab (wL L).val (2 * t1.val) (2 * k.val + 1)) (offF fl (wL L).val (2 * t1.val) (2 * k.val + 1)) 1 28) (shapeCast S16 (pair0_last.sl.v2113_4 d L tab t1 k r g1 g2 hR hin h5) hc16) = AccMath.accVec (rowF fl tab (wL L).val (2 * t1.val) (2 * k.val + 1)) (offF fl (wL L).val (2 * t1.val) (2 * k.val + 1)) 1 29 :=
      acc_step d L fl tab (wL L).val (2 * t1.val) (2 * k.val + 1) 1 _ (hRB _) ⟨28, by decide⟩ ⟨1, by decide⟩ _ rfl _ hwB_28 _ (k1_off48_form ⟨1, by decide⟩ _ _) _ hc16
    have sB1_29 : addf (AccMath.accVec (rowF fl tab (wL L).val (2 * t1.val) (2 * k.val + 1)) (offF fl (wL L).val (2 * t1.val) (2 * k.val + 1)) 1 29) (shapeCast S16 (pair0_last.sl.v2149_4 d L tab t1 k r g1 g2 hR hin h5) hc16) = AccMath.accVec (rowF fl tab (wL L).val (2 * t1.val) (2 * k.val + 1)) (offF fl (wL L).val (2 * t1.val) (2 * k.val + 1)) 1 30 :=
      acc_step d L fl tab (wL L).val (2 * t1.val) (2 * k.val + 1) 1 _ (hRB _) ⟨29, by decide⟩ ⟨1, by decide⟩ _ rfl _ hwB_29 _ (k1_off49_form ⟨1, by decide⟩ _ _) _ hc16
    have sB1_30 : addf (AccMath.accVec (rowF fl tab (wL L).val (2 * t1.val) (2 * k.val + 1)) (offF fl (wL L).val (2 * t1.val) (2 * k.val + 1)) 1 30) (shapeCast S16 (pair0_last.sl.v2185_4 d L tab t1 k r g1 g2 hR hin h5) hc16) = AccMath.accVec (rowF fl tab (wL L).val (2 * t1.val) (2 * k.val + 1)) (offF fl (wL L).val (2 * t1.val) (2 * k.val + 1)) 1 31 :=
      acc_step d L fl tab (wL L).val (2 * t1.val) (2 * k.val + 1) 1 _ (hRB _) ⟨30, by decide⟩ ⟨1, by decide⟩ _ rfl _ hwB_30 _ (k1_off50_form ⟨1, by decide⟩ _ _) _ hc16
    have sB1_31 : addf (AccMath.accVec (rowF fl tab (wL L).val (2 * t1.val) (2 * k.val + 1)) (offF fl (wL L).val (2 * t1.val) (2 * k.val + 1)) 1 31) (shapeCast S16 (pair0_last.sl.v2221_4 d L tab t1 k r g1 g2 hR hin h5) hc16) = AccMath.accVec (rowF fl tab (wL L).val (2 * t1.val) (2 * k.val + 1)) (offF fl (wL L).val (2 * t1.val) (2 * k.val + 1)) 1 32 :=
      acc_step d L fl tab (wL L).val (2 * t1.val) (2 * k.val + 1) 1 _ (hRB _) ⟨31, by decide⟩ ⟨1, by decide⟩ _ rfl _ hwB_31 _ (k1_off51_form ⟨1, by decide⟩ _ _) _ hc16
    have sB1_32 : addf (AccMath.accVec (rowF fl tab (wL L).val (2 * t1.val) (2 * k.val + 1)) (offF fl (wL L).val (2 * t1.val) (2 * k.val + 1)) 1 32) (shapeCast S16 (pair0_last.sl.v1681_5 d L tab t1 k r g1 g2 hR hin h5) hc16) = AccMath.accVec (rowF fl tab (wL L).val (2 * t1.val) (2 * k.val + 1)) (offF fl (wL L).val (2 * t1.val) (2 * k.val + 1)) 1 33 :=
      acc_step d L fl tab (wL L).val (2 * t1.val) (2 * k.val + 1) 1 _ (hRB _) ⟨32, by decide⟩ ⟨1, by decide⟩ _ rfl _ hwB_32 _ (k1_off36_form ⟨2, by decide⟩ _ _) _ hc16
    have sB1_33 : addf (AccMath.accVec (rowF fl tab (wL L).val (2 * t1.val) (2 * k.val + 1)) (offF fl (wL L).val (2 * t1.val) (2 * k.val + 1)) 1 33) (shapeCast S16 (pair0_last.sl.v1717_5 d L tab t1 k r g1 g2 hR hin h5) hc16) = AccMath.accVec (rowF fl tab (wL L).val (2 * t1.val) (2 * k.val + 1)) (offF fl (wL L).val (2 * t1.val) (2 * k.val + 1)) 1 34 :=
      acc_step d L fl tab (wL L).val (2 * t1.val) (2 * k.val + 1) 1 _ (hRB _) ⟨33, by decide⟩ ⟨1, by decide⟩ _ rfl _ hwB_33 _ (k1_off37_form ⟨2, by decide⟩ _ _) _ hc16
    have sB1_34 : addf (AccMath.accVec (rowF fl tab (wL L).val (2 * t1.val) (2 * k.val + 1)) (offF fl (wL L).val (2 * t1.val) (2 * k.val + 1)) 1 34) (shapeCast S16 (pair0_last.sl.v1753_5 d L tab t1 k r g1 g2 hR hin h5) hc16) = AccMath.accVec (rowF fl tab (wL L).val (2 * t1.val) (2 * k.val + 1)) (offF fl (wL L).val (2 * t1.val) (2 * k.val + 1)) 1 35 :=
      acc_step d L fl tab (wL L).val (2 * t1.val) (2 * k.val + 1) 1 _ (hRB _) ⟨34, by decide⟩ ⟨1, by decide⟩ _ rfl _ hwB_34 _ (k1_off38_form ⟨2, by decide⟩ _ _) _ hc16
    have sB1_35 : addf (AccMath.accVec (rowF fl tab (wL L).val (2 * t1.val) (2 * k.val + 1)) (offF fl (wL L).val (2 * t1.val) (2 * k.val + 1)) 1 35) (shapeCast S16 (pair0_last.sl.v1789_5 d L tab t1 k r g1 g2 hR hin h5) hc16) = AccMath.accVec (rowF fl tab (wL L).val (2 * t1.val) (2 * k.val + 1)) (offF fl (wL L).val (2 * t1.val) (2 * k.val + 1)) 1 36 :=
      acc_step d L fl tab (wL L).val (2 * t1.val) (2 * k.val + 1) 1 _ (hRB _) ⟨35, by decide⟩ ⟨1, by decide⟩ _ rfl _ hwB_35 _ (k1_off39_form ⟨2, by decide⟩ _ _) _ hc16
    have sB1_36 : addf (AccMath.accVec (rowF fl tab (wL L).val (2 * t1.val) (2 * k.val + 1)) (offF fl (wL L).val (2 * t1.val) (2 * k.val + 1)) 1 36) (shapeCast S16 (pair0_last.sl.v1825_5 d L tab t1 k r g1 g2 hR hin h5) hc16) = AccMath.accVec (rowF fl tab (wL L).val (2 * t1.val) (2 * k.val + 1)) (offF fl (wL L).val (2 * t1.val) (2 * k.val + 1)) 1 37 :=
      acc_step d L fl tab (wL L).val (2 * t1.val) (2 * k.val + 1) 1 _ (hRB _) ⟨36, by decide⟩ ⟨1, by decide⟩ _ rfl _ hwB_36 _ (k1_off40_form ⟨2, by decide⟩ _ _) _ hc16
    have sB1_37 : addf (AccMath.accVec (rowF fl tab (wL L).val (2 * t1.val) (2 * k.val + 1)) (offF fl (wL L).val (2 * t1.val) (2 * k.val + 1)) 1 37) (shapeCast S16 (pair0_last.sl.v1861_5 d L tab t1 k r g1 g2 hR hin h5) hc16) = AccMath.accVec (rowF fl tab (wL L).val (2 * t1.val) (2 * k.val + 1)) (offF fl (wL L).val (2 * t1.val) (2 * k.val + 1)) 1 38 :=
      acc_step d L fl tab (wL L).val (2 * t1.val) (2 * k.val + 1) 1 _ (hRB _) ⟨37, by decide⟩ ⟨1, by decide⟩ _ rfl _ hwB_37 _ (k1_off41_form ⟨2, by decide⟩ _ _) _ hc16
    have sB1_38 : addf (AccMath.accVec (rowF fl tab (wL L).val (2 * t1.val) (2 * k.val + 1)) (offF fl (wL L).val (2 * t1.val) (2 * k.val + 1)) 1 38) (shapeCast S16 (pair0_last.sl.v1897_5 d L tab t1 k r g1 g2 hR hin h5) hc16) = AccMath.accVec (rowF fl tab (wL L).val (2 * t1.val) (2 * k.val + 1)) (offF fl (wL L).val (2 * t1.val) (2 * k.val + 1)) 1 39 :=
      acc_step d L fl tab (wL L).val (2 * t1.val) (2 * k.val + 1) 1 _ (hRB _) ⟨38, by decide⟩ ⟨1, by decide⟩ _ rfl _ hwB_38 _ (k1_off42_form ⟨2, by decide⟩ _ _) _ hc16
    have sB1_39 : addf (AccMath.accVec (rowF fl tab (wL L).val (2 * t1.val) (2 * k.val + 1)) (offF fl (wL L).val (2 * t1.val) (2 * k.val + 1)) 1 39) (shapeCast S16 (pair0_last.sl.v1933_5 d L tab t1 k r g1 g2 hR hin h5) hc16) = AccMath.accVec (rowF fl tab (wL L).val (2 * t1.val) (2 * k.val + 1)) (offF fl (wL L).val (2 * t1.val) (2 * k.val + 1)) 1 40 :=
      acc_step d L fl tab (wL L).val (2 * t1.val) (2 * k.val + 1) 1 _ (hRB _) ⟨39, by decide⟩ ⟨1, by decide⟩ _ rfl _ hwB_39 _ (k1_off43_form ⟨2, by decide⟩ _ _) _ hc16
    have sB1_40 : addf (AccMath.accVec (rowF fl tab (wL L).val (2 * t1.val) (2 * k.val + 1)) (offF fl (wL L).val (2 * t1.val) (2 * k.val + 1)) 1 40) (shapeCast S16 (pair0_last.sl.v1969_5 d L tab t1 k r g1 g2 hR hin h5) hc16) = AccMath.accVec (rowF fl tab (wL L).val (2 * t1.val) (2 * k.val + 1)) (offF fl (wL L).val (2 * t1.val) (2 * k.val + 1)) 1 41 :=
      acc_step d L fl tab (wL L).val (2 * t1.val) (2 * k.val + 1) 1 _ (hRB _) ⟨40, by decide⟩ ⟨1, by decide⟩ _ rfl _ hwB_40 _ (k1_off44_form ⟨2, by decide⟩ _ _) _ hc16
    have sB1_41 : addf (AccMath.accVec (rowF fl tab (wL L).val (2 * t1.val) (2 * k.val + 1)) (offF fl (wL L).val (2 * t1.val) (2 * k.val + 1)) 1 41) (shapeCast S16 (pair0_last.sl.v2005_5 d L tab t1 k r g1 g2 hR hin h5) hc16) = AccMath.accVec (rowF fl tab (wL L).val (2 * t1.val) (2 * k.val + 1)) (offF fl (wL L).val (2 * t1.val) (2 * k.val + 1)) 1 42 :=
      acc_step d L fl tab (wL L).val (2 * t1.val) (2 * k.val + 1) 1 _ (hRB _) ⟨41, by decide⟩ ⟨1, by decide⟩ _ rfl _ hwB_41 _ (k1_off45_form ⟨2, by decide⟩ _ _) _ hc16
    have sB1_42 : addf (AccMath.accVec (rowF fl tab (wL L).val (2 * t1.val) (2 * k.val + 1)) (offF fl (wL L).val (2 * t1.val) (2 * k.val + 1)) 1 42) (shapeCast S16 (pair0_last.sl.v2041_5 d L tab t1 k r g1 g2 hR hin h5) hc16) = AccMath.accVec (rowF fl tab (wL L).val (2 * t1.val) (2 * k.val + 1)) (offF fl (wL L).val (2 * t1.val) (2 * k.val + 1)) 1 43 :=
      acc_step d L fl tab (wL L).val (2 * t1.val) (2 * k.val + 1) 1 _ (hRB _) ⟨42, by decide⟩ ⟨1, by decide⟩ _ rfl _ hwB_42 _ (k1_off46_form ⟨2, by decide⟩ _ _) _ hc16
    have sB1_43 : addf (AccMath.accVec (rowF fl tab (wL L).val (2 * t1.val) (2 * k.val + 1)) (offF fl (wL L).val (2 * t1.val) (2 * k.val + 1)) 1 43) (shapeCast S16 (pair0_last.sl.v2077_5 d L tab t1 k r g1 g2 hR hin h5) hc16) = AccMath.accVec (rowF fl tab (wL L).val (2 * t1.val) (2 * k.val + 1)) (offF fl (wL L).val (2 * t1.val) (2 * k.val + 1)) 1 44 :=
      acc_step d L fl tab (wL L).val (2 * t1.val) (2 * k.val + 1) 1 _ (hRB _) ⟨43, by decide⟩ ⟨1, by decide⟩ _ rfl _ hwB_43 _ (k1_off47_form ⟨2, by decide⟩ _ _) _ hc16
    have sB1_44 : addf (AccMath.accVec (rowF fl tab (wL L).val (2 * t1.val) (2 * k.val + 1)) (offF fl (wL L).val (2 * t1.val) (2 * k.val + 1)) 1 44) (shapeCast S16 (pair0_last.sl.v2113_5 d L tab t1 k r g1 g2 hR hin h5) hc16) = AccMath.accVec (rowF fl tab (wL L).val (2 * t1.val) (2 * k.val + 1)) (offF fl (wL L).val (2 * t1.val) (2 * k.val + 1)) 1 45 :=
      acc_step d L fl tab (wL L).val (2 * t1.val) (2 * k.val + 1) 1 _ (hRB _) ⟨44, by decide⟩ ⟨1, by decide⟩ _ rfl _ hwB_44 _ (k1_off48_form ⟨2, by decide⟩ _ _) _ hc16
    have sB1_45 : addf (AccMath.accVec (rowF fl tab (wL L).val (2 * t1.val) (2 * k.val + 1)) (offF fl (wL L).val (2 * t1.val) (2 * k.val + 1)) 1 45) (shapeCast S16 (pair0_last.sl.v2149_5 d L tab t1 k r g1 g2 hR hin h5) hc16) = AccMath.accVec (rowF fl tab (wL L).val (2 * t1.val) (2 * k.val + 1)) (offF fl (wL L).val (2 * t1.val) (2 * k.val + 1)) 1 46 :=
      acc_step d L fl tab (wL L).val (2 * t1.val) (2 * k.val + 1) 1 _ (hRB _) ⟨45, by decide⟩ ⟨1, by decide⟩ _ rfl _ hwB_45 _ (k1_off49_form ⟨2, by decide⟩ _ _) _ hc16
    have sB1_46 : addf (AccMath.accVec (rowF fl tab (wL L).val (2 * t1.val) (2 * k.val + 1)) (offF fl (wL L).val (2 * t1.val) (2 * k.val + 1)) 1 46) (shapeCast S16 (pair0_last.sl.v2185_5 d L tab t1 k r g1 g2 hR hin h5) hc16) = AccMath.accVec (rowF fl tab (wL L).val (2 * t1.val) (2 * k.val + 1)) (offF fl (wL L).val (2 * t1.val) (2 * k.val + 1)) 1 47 :=
      acc_step d L fl tab (wL L).val (2 * t1.val) (2 * k.val + 1) 1 _ (hRB _) ⟨46, by decide⟩ ⟨1, by decide⟩ _ rfl _ hwB_46 _ (k1_off50_form ⟨2, by decide⟩ _ _) _ hc16
    have sB1_47 : addf (AccMath.accVec (rowF fl tab (wL L).val (2 * t1.val) (2 * k.val + 1)) (offF fl (wL L).val (2 * t1.val) (2 * k.val + 1)) 1 47) (shapeCast S16 (pair0_last.sl.v2221_5 d L tab t1 k r g1 g2 hR hin h5) hc16) = AccMath.accVec (rowF fl tab (wL L).val (2 * t1.val) (2 * k.val + 1)) (offF fl (wL L).val (2 * t1.val) (2 * k.val + 1)) 1 48 :=
      acc_step d L fl tab (wL L).val (2 * t1.val) (2 * k.val + 1) 1 _ (hRB _) ⟨47, by decide⟩ ⟨1, by decide⟩ _ rfl _ hwB_47 _ (k1_off51_form ⟨2, by decide⟩ _ _) _ hc16
    have sB1_48 : addf (AccMath.accVec (rowF fl tab (wL L).val (2 * t1.val) (2 * k.val + 1)) (offF fl (wL L).val (2 * t1.val) (2 * k.val + 1)) 1 48) (shapeCast S16 (pair0_last.sl.v1586 d L tab t1 k r g1 g2 hR hin h5) hc16) = AccMath.accVec (rowF fl tab (wL L).val (2 * t1.val) (2 * k.val + 1)) (offF fl (wL L).val (2 * t1.val) (2 * k.val + 1)) 1 49 :=
      acc_step d L fl tab (wL L).val (2 * t1.val) (2 * k.val + 1) 1 _ (hRB _) ⟨48, by decide⟩ ⟨1, by decide⟩ _ rfl _ hwB_48 _ (k1_off53_form _ _) _ hc16
    have sB1_49 : addf (AccMath.accVec (rowF fl tab (wL L).val (2 * t1.val) (2 * k.val + 1)) (offF fl (wL L).val (2 * t1.val) (2 * k.val + 1)) 1 49) (shapeCast S16 (pair0_last.sl.v1620 d L tab t1 k r g1 g2 hR hin h5) hc16) = AccMath.accVec (rowF fl tab (wL L).val (2 * t1.val) (2 * k.val + 1)) (offF fl (wL L).val (2 * t1.val) (2 * k.val + 1)) 1 50 :=
      acc_step d L fl tab (wL L).val (2 * t1.val) (2 * k.val + 1) 1 _ (hRB _) ⟨49, by decide⟩ ⟨1, by decide⟩ _ rfl _ hwB_49 _ (k1_off54_form _ _) _ hc16
    have hPB1 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val + 1)) (offF fl (wL L).val (2 * t1.val) (2 * k.val + 1)) 1 0) (shapeCast S16 (pair0_last.sl.v1681_3 d L tab t1 k r g1 g2 hR hin h5) hc16)) (shapeCast S16 (pair0_last.sl.v1717_3 d L tab t1 k r g1 g2 hR hin h5) hc16)) (shapeCast S16 (pair0_last.sl.v1753_3 d L tab t1 k r g1 g2 hR hin h5) hc16)) (shapeCast S16 (pair0_last.sl.v1789_3 d L tab t1 k r g1 g2 hR hin h5) hc16)) (shapeCast S16 (pair0_last.sl.v1825_3 d L tab t1 k r g1 g2 hR hin h5) hc16)) (shapeCast S16 (pair0_last.sl.v1861_3 d L tab t1 k r g1 g2 hR hin h5) hc16)) (shapeCast S16 (pair0_last.sl.v1897_3 d L tab t1 k r g1 g2 hR hin h5) hc16)) (shapeCast S16 (pair0_last.sl.v1933_3 d L tab t1 k r g1 g2 hR hin h5) hc16)) (shapeCast S16 (pair0_last.sl.v1969_3 d L tab t1 k r g1 g2 hR hin h5) hc16)) (shapeCast S16 (pair0_last.sl.v2005_3 d L tab t1 k r g1 g2 hR hin h5) hc16)) (shapeCast S16 (pair0_last.sl.v2041_3 d L tab t1 k r g1 g2 hR hin h5) hc16)) (shapeCast S16 (pair0_last.sl.v2077_3 d L tab t1 k r g1 g2 hR hin h5) hc16)) (shapeCast S16 (pair0_last.sl.v2113_3 d L tab t1 k r g1 g2 hR hin h5) hc16)) (shapeCast S16 (pair0_last.sl.v2149_3 d L tab t1 k r g1 g2 hR hin h5) hc16)) (shapeCast S16 (pair0_last.sl.v2185_3 d L tab t1 k r g1 g2 hR hin h5) hc16)) (shapeCast S16 (pair0_last.sl.v2221_3 d L tab t1 k r g1 g2 hR hin h5) hc16)) (shapeCast S16 (pair0_last.sl.v1681_4 d L tab t1 k r g1 g2 hR hin h5) hc16)) (shapeCast S16 (pair0_last.sl.v1717_4 d L tab t1 k r g1 g2 hR hin h5) hc16)) (shapeCast S16 (pair0_last.sl.v1753_4 d L tab t1 k r g1 g2 hR hin h5) hc16)) (shapeCast S16 (pair0_last.sl.v1789_4 d L tab t1 k r g1 g2 hR hin h5) hc16)) (shapeCast S16 (pair0_last.sl.v1825_4 d L tab t1 k r g1 g2 hR hin h5) hc16)) (shapeCast S16 (pair0_last.sl.v1861_4 d L tab t1 k r g1 g2 hR hin h5) hc16)) (shapeCast S16 (pair0_last.sl.v1897_4 d L tab t1 k r g1 g2 hR hin h5) hc16)) (shapeCast S16 (pair0_last.sl.v1933_4 d L tab t1 k r g1 g2 hR hin h5) hc16)) (shapeCast S16 (pair0_last.sl.v1969_4 d L tab t1 k r g1 g2 hR hin h5) hc16)) (shapeCast S16 (pair0_last.sl.v2005_4 d L tab t1 k r g1 g2 hR hin h5) hc16)) (shapeCast S16 (pair0_last.sl.v2041_4 d L tab t1 k r g1 g2 hR hin h5) hc16)) (shapeCast S16 (pair0_last.sl.v2077_4 d L tab t1 k r g1 g2 hR hin h5) hc16)) (shapeCast S16 (pair0_last.sl.v2113_4 d L tab t1 k r g1 g2 hR hin h5) hc16)) (shapeCast S16 (pair0_last.sl.v2149_4 d L tab t1 k r g1 g2 hR hin h5) hc16)) (shapeCast S16 (pair0_last.sl.v2185_4 d L tab t1 k r g1 g2 hR hin h5) hc16)) (shapeCast S16 (pair0_last.sl.v2221_4 d L tab t1 k r g1 g2 hR hin h5) hc16)) (shapeCast S16 (pair0_last.sl.v1681_5 d L tab t1 k r g1 g2 hR hin h5) hc16)) (shapeCast S16 (pair0_last.sl.v1717_5 d L tab t1 k r g1 g2 hR hin h5) hc16)) (shapeCast S16 (pair0_last.sl.v1753_5 d L tab t1 k r g1 g2 hR hin h5) hc16)) (shapeCast S16 (pair0_last.sl.v1789_5 d L tab t1 k r g1 g2 hR hin h5) hc16)) (shapeCast S16 (pair0_last.sl.v1825_5 d L tab t1 k r g1 g2 hR hin h5) hc16)) (shapeCast S16 (pair0_last.sl.v1861_5 d L tab t1 k r g1 g2 hR hin h5) hc16)) (shapeCast S16 (pair0_last.sl.v1897_5 d L tab t1 k r g1 g2 hR hin h5) hc16)) (shapeCast S16 (pair0_last.sl.v1933_5 d L tab t1 k r g1 g2 hR hin h5) hc16)) (shapeCast S16 (pair0_last.sl.v1969_5 d L tab t1 k r g1 g2 hR hin h5) hc16)) (shapeCast S16 (pair0_last.sl.v2005_5 d L tab t1 k r g1 g2 hR hin h5) hc16)) (shapeCast S16 (pair0_last.sl.v2041_5 d L tab t1 k r g1 g2 hR hin h5) hc16)) (shapeCast S16 (pair0_last.sl.v2077_5 d L tab t1 k r g1 g2 hR hin h5) hc16)) (shapeCast S16 (pair0_last.sl.v2113_5 d L tab t1 k r g1 g2 hR hin h5) hc16)) (shapeCast S16 (pair0_last.sl.v2149_5 d L tab t1 k r g1 g2 hR hin h5) hc16)) (shapeCast S16 (pair0_last.sl.v2185_5 d L tab t1 k r g1 g2 hR hin h5) hc16)) (shapeCast S16 (pair0_last.sl.v2221_5 d L tab t1 k r g1 g2 hR hin h5) hc16)) (shapeCast S16 (pair0_last.sl.v1586 d L tab t1 k r g1 g2 hR hin h5) hc16)) (shapeCast S16 (pair0_last.sl.v1620 d L tab t1 k r g1 g2 hR hin h5) hc16)) hc1 x = Spec.bagPartial fl tab (128 * (wL L).val + 16 * (2 * t1.val) + (2 * k.val + 1)) (16 * 1 + (x 2).val) 50 := fun x => by
      rw [sB1_0, sB1_1, sB1_2, sB1_3, sB1_4, sB1_5, sB1_6, sB1_7, sB1_8, sB1_9, sB1_10, sB1_11, sB1_12, sB1_13, sB1_14, sB1_15, sB1_16, sB1_17, sB1_18, sB1_19, sB1_20, sB1_21, sB1_22, sB1_23, sB1_24, sB1_25, sB1_26, sB1_27, sB1_28, sB1_29, sB1_30, sB1_31, sB1_32, sB1_33, sB1_34, sB1_35, sB1_36, sB1_37, sB1_38, sB1_39, sB1_40, sB1_41, sB1_42, sB1_43, sB1_44, sB1_45, sB1_46, sB1_47, sB1_48, sB1_49]; exact payload_ok fl tab (wL L).val (2 * t1.val) (2 * k.val + 1) ⟨1, by decide⟩ hc1 x
    have sB2_0 : addf (AccMath.accVec (rowF fl tab (wL L).val (2 * t1.val) (2 * k.val + 1)) (offF fl (wL L).val (2 * t1.val) (2 * k.val + 1)) 2 0) (shapeCast S16 (pair0_last.sl.v1689_3 d L tab t1 k r g1 g2 hR hin h5) hc16) = AccMath.accVec (rowF fl tab (wL L).val (2 * t1.val) (2 * k.val + 1)) (offF fl (wL L).val (2 * t1.val) (2 * k.val + 1)) 2 1 :=
      acc_step d L fl tab (wL L).val (2 * t1.val) (2 * k.val + 1) 1 _ (hRB _) ⟨0, by decide⟩ ⟨2, by decide⟩ _ rfl _ hwB_0 _ (k1_off36_form ⟨0, by decide⟩ _ _) _ hc16
    have sB2_1 : addf (AccMath.accVec (rowF fl tab (wL L).val (2 * t1.val) (2 * k.val + 1)) (offF fl (wL L).val (2 * t1.val) (2 * k.val + 1)) 2 1) (shapeCast S16 (pair0_last.sl.v1725_3 d L tab t1 k r g1 g2 hR hin h5) hc16) = AccMath.accVec (rowF fl tab (wL L).val (2 * t1.val) (2 * k.val + 1)) (offF fl (wL L).val (2 * t1.val) (2 * k.val + 1)) 2 2 :=
      acc_step d L fl tab (wL L).val (2 * t1.val) (2 * k.val + 1) 1 _ (hRB _) ⟨1, by decide⟩ ⟨2, by decide⟩ _ rfl _ hwB_1 _ (k1_off37_form ⟨0, by decide⟩ _ _) _ hc16
    have sB2_2 : addf (AccMath.accVec (rowF fl tab (wL L).val (2 * t1.val) (2 * k.val + 1)) (offF fl (wL L).val (2 * t1.val) (2 * k.val + 1)) 2 2) (shapeCast S16 (pair0_last.sl.v1761_3 d L tab t1 k r g1 g2 hR hin h5) hc16) = AccMath.accVec (rowF fl tab (wL L).val (2 * t1.val) (2 * k.val + 1)) (offF fl (wL L).val (2 * t1.val) (2 * k.val + 1)) 2 3 :=
      acc_step d L fl tab (wL L).val (2 * t1.val) (2 * k.val + 1) 1 _ (hRB _) ⟨2, by decide⟩ ⟨2, by decide⟩ _ rfl _ hwB_2 _ (k1_off38_form ⟨0, by decide⟩ _ _) _ hc16
    have sB2_3 : addf (AccMath.accVec (rowF fl tab (wL L).val (2 * t1.val) (2 * k.val + 1)) (offF fl (wL L).val (2 * t1.val) (2 * k.val + 1)) 2 3) (shapeCast S16 (pair0_last.sl.v1797_3 d L tab t1 k r g1 g2 hR hin h5) hc16) = AccMath.accVec (rowF fl tab (wL L).val (2 * t1.val) (2 * k.val + 1)) (offF fl (wL L).val (2 * t1.val) (2 * k.val + 1)) 2 4 :=
      acc_step d L fl tab (wL L).val (2 * t1.val) (2 * k.val + 1) 1 _ (hRB _) ⟨3, by decide⟩ ⟨2, by decide⟩ _ rfl _ hwB_3 _ (k1_off39_form ⟨0, by decide⟩ _ _) _ hc16
    have sB2_4 : addf (AccMath.accVec (rowF fl tab (wL L).val (2 * t1.val) (2 * k.val + 1)) (offF fl (wL L).val (2 * t1.val) (2 * k.val + 1)) 2 4) (shapeCast S16 (pair0_last.sl.v1833_3 d L tab t1 k r g1 g2 hR hin h5) hc16) = AccMath.accVec (rowF fl tab (wL L).val (2 * t1.val) (2 * k.val + 1)) (offF fl (wL L).val (2 * t1.val) (2 * k.val + 1)) 2 5 :=
      acc_step d L fl tab (wL L).val (2 * t1.val) (2 * k.val + 1) 1 _ (hRB _) ⟨4, by decide⟩ ⟨2, by decide⟩ _ rfl _ hwB_4 _ (k1_off40_form ⟨0, by decide⟩ _ _) _ hc16
    have sB2_5 : addf (AccMath.accVec (rowF fl tab (wL L).val (2 * t1.val) (2 * k.val + 1)) (offF fl (wL L).val (2 * t1.val) (2 * k.val + 1)) 2 5) (shapeCast S16 (pair0_last.sl.v1869_3 d L tab t1 k r g1 g2 hR hin h5) hc16) = AccMath.accVec (rowF fl tab (wL L).val (2 * t1.val) (2 * k.val + 1)) (offF fl (wL L).val (2 * t1.val) (2 * k.val + 1)) 2 6 :=
      acc_step d L fl tab (wL L).val (2 * t1.val) (2 * k.val + 1) 1 _ (hRB _) ⟨5, by decide⟩ ⟨2, by decide⟩ _ rfl _ hwB_5 _ (k1_off41_form ⟨0, by decide⟩ _ _) _ hc16
    have sB2_6 : addf (AccMath.accVec (rowF fl tab (wL L).val (2 * t1.val) (2 * k.val + 1)) (offF fl (wL L).val (2 * t1.val) (2 * k.val + 1)) 2 6) (shapeCast S16 (pair0_last.sl.v1905_3 d L tab t1 k r g1 g2 hR hin h5) hc16) = AccMath.accVec (rowF fl tab (wL L).val (2 * t1.val) (2 * k.val + 1)) (offF fl (wL L).val (2 * t1.val) (2 * k.val + 1)) 2 7 :=
      acc_step d L fl tab (wL L).val (2 * t1.val) (2 * k.val + 1) 1 _ (hRB _) ⟨6, by decide⟩ ⟨2, by decide⟩ _ rfl _ hwB_6 _ (k1_off42_form ⟨0, by decide⟩ _ _) _ hc16
    have sB2_7 : addf (AccMath.accVec (rowF fl tab (wL L).val (2 * t1.val) (2 * k.val + 1)) (offF fl (wL L).val (2 * t1.val) (2 * k.val + 1)) 2 7) (shapeCast S16 (pair0_last.sl.v1941_3 d L tab t1 k r g1 g2 hR hin h5) hc16) = AccMath.accVec (rowF fl tab (wL L).val (2 * t1.val) (2 * k.val + 1)) (offF fl (wL L).val (2 * t1.val) (2 * k.val + 1)) 2 8 :=
      acc_step d L fl tab (wL L).val (2 * t1.val) (2 * k.val + 1) 1 _ (hRB _) ⟨7, by decide⟩ ⟨2, by decide⟩ _ rfl _ hwB_7 _ (k1_off43_form ⟨0, by decide⟩ _ _) _ hc16
    have sB2_8 : addf (AccMath.accVec (rowF fl tab (wL L).val (2 * t1.val) (2 * k.val + 1)) (offF fl (wL L).val (2 * t1.val) (2 * k.val + 1)) 2 8) (shapeCast S16 (pair0_last.sl.v1977_3 d L tab t1 k r g1 g2 hR hin h5) hc16) = AccMath.accVec (rowF fl tab (wL L).val (2 * t1.val) (2 * k.val + 1)) (offF fl (wL L).val (2 * t1.val) (2 * k.val + 1)) 2 9 :=
      acc_step d L fl tab (wL L).val (2 * t1.val) (2 * k.val + 1) 1 _ (hRB _) ⟨8, by decide⟩ ⟨2, by decide⟩ _ rfl _ hwB_8 _ (k1_off44_form ⟨0, by decide⟩ _ _) _ hc16
    have sB2_9 : addf (AccMath.accVec (rowF fl tab (wL L).val (2 * t1.val) (2 * k.val + 1)) (offF fl (wL L).val (2 * t1.val) (2 * k.val + 1)) 2 9) (shapeCast S16 (pair0_last.sl.v2013_3 d L tab t1 k r g1 g2 hR hin h5) hc16) = AccMath.accVec (rowF fl tab (wL L).val (2 * t1.val) (2 * k.val + 1)) (offF fl (wL L).val (2 * t1.val) (2 * k.val + 1)) 2 10 :=
      acc_step d L fl tab (wL L).val (2 * t1.val) (2 * k.val + 1) 1 _ (hRB _) ⟨9, by decide⟩ ⟨2, by decide⟩ _ rfl _ hwB_9 _ (k1_off45_form ⟨0, by decide⟩ _ _) _ hc16
    have sB2_10 : addf (AccMath.accVec (rowF fl tab (wL L).val (2 * t1.val) (2 * k.val + 1)) (offF fl (wL L).val (2 * t1.val) (2 * k.val + 1)) 2 10) (shapeCast S16 (pair0_last.sl.v2049_3 d L tab t1 k r g1 g2 hR hin h5) hc16) = AccMath.accVec (rowF fl tab (wL L).val (2 * t1.val) (2 * k.val + 1)) (offF fl (wL L).val (2 * t1.val) (2 * k.val + 1)) 2 11 :=
      acc_step d L fl tab (wL L).val (2 * t1.val) (2 * k.val + 1) 1 _ (hRB _) ⟨10, by decide⟩ ⟨2, by decide⟩ _ rfl _ hwB_10 _ (k1_off46_form ⟨0, by decide⟩ _ _) _ hc16
    have sB2_11 : addf (AccMath.accVec (rowF fl tab (wL L).val (2 * t1.val) (2 * k.val + 1)) (offF fl (wL L).val (2 * t1.val) (2 * k.val + 1)) 2 11) (shapeCast S16 (pair0_last.sl.v2085_3 d L tab t1 k r g1 g2 hR hin h5) hc16) = AccMath.accVec (rowF fl tab (wL L).val (2 * t1.val) (2 * k.val + 1)) (offF fl (wL L).val (2 * t1.val) (2 * k.val + 1)) 2 12 :=
      acc_step d L fl tab (wL L).val (2 * t1.val) (2 * k.val + 1) 1 _ (hRB _) ⟨11, by decide⟩ ⟨2, by decide⟩ _ rfl _ hwB_11 _ (k1_off47_form ⟨0, by decide⟩ _ _) _ hc16
    have sB2_12 : addf (AccMath.accVec (rowF fl tab (wL L).val (2 * t1.val) (2 * k.val + 1)) (offF fl (wL L).val (2 * t1.val) (2 * k.val + 1)) 2 12) (shapeCast S16 (pair0_last.sl.v2121_3 d L tab t1 k r g1 g2 hR hin h5) hc16) = AccMath.accVec (rowF fl tab (wL L).val (2 * t1.val) (2 * k.val + 1)) (offF fl (wL L).val (2 * t1.val) (2 * k.val + 1)) 2 13 :=
      acc_step d L fl tab (wL L).val (2 * t1.val) (2 * k.val + 1) 1 _ (hRB _) ⟨12, by decide⟩ ⟨2, by decide⟩ _ rfl _ hwB_12 _ (k1_off48_form ⟨0, by decide⟩ _ _) _ hc16
    have sB2_13 : addf (AccMath.accVec (rowF fl tab (wL L).val (2 * t1.val) (2 * k.val + 1)) (offF fl (wL L).val (2 * t1.val) (2 * k.val + 1)) 2 13) (shapeCast S16 (pair0_last.sl.v2157_3 d L tab t1 k r g1 g2 hR hin h5) hc16) = AccMath.accVec (rowF fl tab (wL L).val (2 * t1.val) (2 * k.val + 1)) (offF fl (wL L).val (2 * t1.val) (2 * k.val + 1)) 2 14 :=
      acc_step d L fl tab (wL L).val (2 * t1.val) (2 * k.val + 1) 1 _ (hRB _) ⟨13, by decide⟩ ⟨2, by decide⟩ _ rfl _ hwB_13 _ (k1_off49_form ⟨0, by decide⟩ _ _) _ hc16
    have sB2_14 : addf (AccMath.accVec (rowF fl tab (wL L).val (2 * t1.val) (2 * k.val + 1)) (offF fl (wL L).val (2 * t1.val) (2 * k.val + 1)) 2 14) (shapeCast S16 (pair0_last.sl.v2193_3 d L tab t1 k r g1 g2 hR hin h5) hc16) = AccMath.accVec (rowF fl tab (wL L).val (2 * t1.val) (2 * k.val + 1)) (offF fl (wL L).val (2 * t1.val) (2 * k.val + 1)) 2 15 :=
      acc_step d L fl tab (wL L).val (2 * t1.val) (2 * k.val + 1) 1 _ (hRB _) ⟨14, by decide⟩ ⟨2, by decide⟩ _ rfl _ hwB_14 _ (k1_off50_form ⟨0, by decide⟩ _ _) _ hc16
    have sB2_15 : addf (AccMath.accVec (rowF fl tab (wL L).val (2 * t1.val) (2 * k.val + 1)) (offF fl (wL L).val (2 * t1.val) (2 * k.val + 1)) 2 15) (shapeCast S16 (pair0_last.sl.v2229_3 d L tab t1 k r g1 g2 hR hin h5) hc16) = AccMath.accVec (rowF fl tab (wL L).val (2 * t1.val) (2 * k.val + 1)) (offF fl (wL L).val (2 * t1.val) (2 * k.val + 1)) 2 16 :=
      acc_step d L fl tab (wL L).val (2 * t1.val) (2 * k.val + 1) 1 _ (hRB _) ⟨15, by decide⟩ ⟨2, by decide⟩ _ rfl _ hwB_15 _ (k1_off51_form ⟨0, by decide⟩ _ _) _ hc16
    have sB2_16 : addf (AccMath.accVec (rowF fl tab (wL L).val (2 * t1.val) (2 * k.val + 1)) (offF fl (wL L).val (2 * t1.val) (2 * k.val + 1)) 2 16) (shapeCast S16 (pair0_last.sl.v1689_4 d L tab t1 k r g1 g2 hR hin h5) hc16) = AccMath.accVec (rowF fl tab (wL L).val (2 * t1.val) (2 * k.val + 1)) (offF fl (wL L).val (2 * t1.val) (2 * k.val + 1)) 2 17 :=
      acc_step d L fl tab (wL L).val (2 * t1.val) (2 * k.val + 1) 1 _ (hRB _) ⟨16, by decide⟩ ⟨2, by decide⟩ _ rfl _ hwB_16 _ (k1_off36_form ⟨1, by decide⟩ _ _) _ hc16
    have sB2_17 : addf (AccMath.accVec (rowF fl tab (wL L).val (2 * t1.val) (2 * k.val + 1)) (offF fl (wL L).val (2 * t1.val) (2 * k.val + 1)) 2 17) (shapeCast S16 (pair0_last.sl.v1725_4 d L tab t1 k r g1 g2 hR hin h5) hc16) = AccMath.accVec (rowF fl tab (wL L).val (2 * t1.val) (2 * k.val + 1)) (offF fl (wL L).val (2 * t1.val) (2 * k.val + 1)) 2 18 :=
      acc_step d L fl tab (wL L).val (2 * t1.val) (2 * k.val + 1) 1 _ (hRB _) ⟨17, by decide⟩ ⟨2, by decide⟩ _ rfl _ hwB_17 _ (k1_off37_form ⟨1, by decide⟩ _ _) _ hc16
    have sB2_18 : addf (AccMath.accVec (rowF fl tab (wL L).val (2 * t1.val) (2 * k.val + 1)) (offF fl (wL L).val (2 * t1.val) (2 * k.val + 1)) 2 18) (shapeCast S16 (pair0_last.sl.v1761_4 d L tab t1 k r g1 g2 hR hin h5) hc16) = AccMath.accVec (rowF fl tab (wL L).val (2 * t1.val) (2 * k.val + 1)) (offF fl (wL L).val (2 * t1.val) (2 * k.val + 1)) 2 19 :=
      acc_step d L fl tab (wL L).val (2 * t1.val) (2 * k.val + 1) 1 _ (hRB _) ⟨18, by decide⟩ ⟨2, by decide⟩ _ rfl _ hwB_18 _ (k1_off38_form ⟨1, by decide⟩ _ _) _ hc16
    have sB2_19 : addf (AccMath.accVec (rowF fl tab (wL L).val (2 * t1.val) (2 * k.val + 1)) (offF fl (wL L).val (2 * t1.val) (2 * k.val + 1)) 2 19) (shapeCast S16 (pair0_last.sl.v1797_4 d L tab t1 k r g1 g2 hR hin h5) hc16) = AccMath.accVec (rowF fl tab (wL L).val (2 * t1.val) (2 * k.val + 1)) (offF fl (wL L).val (2 * t1.val) (2 * k.val + 1)) 2 20 :=
      acc_step d L fl tab (wL L).val (2 * t1.val) (2 * k.val + 1) 1 _ (hRB _) ⟨19, by decide⟩ ⟨2, by decide⟩ _ rfl _ hwB_19 _ (k1_off39_form ⟨1, by decide⟩ _ _) _ hc16
    have sB2_20 : addf (AccMath.accVec (rowF fl tab (wL L).val (2 * t1.val) (2 * k.val + 1)) (offF fl (wL L).val (2 * t1.val) (2 * k.val + 1)) 2 20) (shapeCast S16 (pair0_last.sl.v1833_4 d L tab t1 k r g1 g2 hR hin h5) hc16) = AccMath.accVec (rowF fl tab (wL L).val (2 * t1.val) (2 * k.val + 1)) (offF fl (wL L).val (2 * t1.val) (2 * k.val + 1)) 2 21 :=
      acc_step d L fl tab (wL L).val (2 * t1.val) (2 * k.val + 1) 1 _ (hRB _) ⟨20, by decide⟩ ⟨2, by decide⟩ _ rfl _ hwB_20 _ (k1_off40_form ⟨1, by decide⟩ _ _) _ hc16
    have sB2_21 : addf (AccMath.accVec (rowF fl tab (wL L).val (2 * t1.val) (2 * k.val + 1)) (offF fl (wL L).val (2 * t1.val) (2 * k.val + 1)) 2 21) (shapeCast S16 (pair0_last.sl.v1869_4 d L tab t1 k r g1 g2 hR hin h5) hc16) = AccMath.accVec (rowF fl tab (wL L).val (2 * t1.val) (2 * k.val + 1)) (offF fl (wL L).val (2 * t1.val) (2 * k.val + 1)) 2 22 :=
      acc_step d L fl tab (wL L).val (2 * t1.val) (2 * k.val + 1) 1 _ (hRB _) ⟨21, by decide⟩ ⟨2, by decide⟩ _ rfl _ hwB_21 _ (k1_off41_form ⟨1, by decide⟩ _ _) _ hc16
    have sB2_22 : addf (AccMath.accVec (rowF fl tab (wL L).val (2 * t1.val) (2 * k.val + 1)) (offF fl (wL L).val (2 * t1.val) (2 * k.val + 1)) 2 22) (shapeCast S16 (pair0_last.sl.v1905_4 d L tab t1 k r g1 g2 hR hin h5) hc16) = AccMath.accVec (rowF fl tab (wL L).val (2 * t1.val) (2 * k.val + 1)) (offF fl (wL L).val (2 * t1.val) (2 * k.val + 1)) 2 23 :=
      acc_step d L fl tab (wL L).val (2 * t1.val) (2 * k.val + 1) 1 _ (hRB _) ⟨22, by decide⟩ ⟨2, by decide⟩ _ rfl _ hwB_22 _ (k1_off42_form ⟨1, by decide⟩ _ _) _ hc16
    have sB2_23 : addf (AccMath.accVec (rowF fl tab (wL L).val (2 * t1.val) (2 * k.val + 1)) (offF fl (wL L).val (2 * t1.val) (2 * k.val + 1)) 2 23) (shapeCast S16 (pair0_last.sl.v1941_4 d L tab t1 k r g1 g2 hR hin h5) hc16) = AccMath.accVec (rowF fl tab (wL L).val (2 * t1.val) (2 * k.val + 1)) (offF fl (wL L).val (2 * t1.val) (2 * k.val + 1)) 2 24 :=
      acc_step d L fl tab (wL L).val (2 * t1.val) (2 * k.val + 1) 1 _ (hRB _) ⟨23, by decide⟩ ⟨2, by decide⟩ _ rfl _ hwB_23 _ (k1_off43_form ⟨1, by decide⟩ _ _) _ hc16
    have sB2_24 : addf (AccMath.accVec (rowF fl tab (wL L).val (2 * t1.val) (2 * k.val + 1)) (offF fl (wL L).val (2 * t1.val) (2 * k.val + 1)) 2 24) (shapeCast S16 (pair0_last.sl.v1977_4 d L tab t1 k r g1 g2 hR hin h5) hc16) = AccMath.accVec (rowF fl tab (wL L).val (2 * t1.val) (2 * k.val + 1)) (offF fl (wL L).val (2 * t1.val) (2 * k.val + 1)) 2 25 :=
      acc_step d L fl tab (wL L).val (2 * t1.val) (2 * k.val + 1) 1 _ (hRB _) ⟨24, by decide⟩ ⟨2, by decide⟩ _ rfl _ hwB_24 _ (k1_off44_form ⟨1, by decide⟩ _ _) _ hc16
    have sB2_25 : addf (AccMath.accVec (rowF fl tab (wL L).val (2 * t1.val) (2 * k.val + 1)) (offF fl (wL L).val (2 * t1.val) (2 * k.val + 1)) 2 25) (shapeCast S16 (pair0_last.sl.v2013_4 d L tab t1 k r g1 g2 hR hin h5) hc16) = AccMath.accVec (rowF fl tab (wL L).val (2 * t1.val) (2 * k.val + 1)) (offF fl (wL L).val (2 * t1.val) (2 * k.val + 1)) 2 26 :=
      acc_step d L fl tab (wL L).val (2 * t1.val) (2 * k.val + 1) 1 _ (hRB _) ⟨25, by decide⟩ ⟨2, by decide⟩ _ rfl _ hwB_25 _ (k1_off45_form ⟨1, by decide⟩ _ _) _ hc16
    have sB2_26 : addf (AccMath.accVec (rowF fl tab (wL L).val (2 * t1.val) (2 * k.val + 1)) (offF fl (wL L).val (2 * t1.val) (2 * k.val + 1)) 2 26) (shapeCast S16 (pair0_last.sl.v2049_4 d L tab t1 k r g1 g2 hR hin h5) hc16) = AccMath.accVec (rowF fl tab (wL L).val (2 * t1.val) (2 * k.val + 1)) (offF fl (wL L).val (2 * t1.val) (2 * k.val + 1)) 2 27 :=
      acc_step d L fl tab (wL L).val (2 * t1.val) (2 * k.val + 1) 1 _ (hRB _) ⟨26, by decide⟩ ⟨2, by decide⟩ _ rfl _ hwB_26 _ (k1_off46_form ⟨1, by decide⟩ _ _) _ hc16
    have sB2_27 : addf (AccMath.accVec (rowF fl tab (wL L).val (2 * t1.val) (2 * k.val + 1)) (offF fl (wL L).val (2 * t1.val) (2 * k.val + 1)) 2 27) (shapeCast S16 (pair0_last.sl.v2085_4 d L tab t1 k r g1 g2 hR hin h5) hc16) = AccMath.accVec (rowF fl tab (wL L).val (2 * t1.val) (2 * k.val + 1)) (offF fl (wL L).val (2 * t1.val) (2 * k.val + 1)) 2 28 :=
      acc_step d L fl tab (wL L).val (2 * t1.val) (2 * k.val + 1) 1 _ (hRB _) ⟨27, by decide⟩ ⟨2, by decide⟩ _ rfl _ hwB_27 _ (k1_off47_form ⟨1, by decide⟩ _ _) _ hc16
    have sB2_28 : addf (AccMath.accVec (rowF fl tab (wL L).val (2 * t1.val) (2 * k.val + 1)) (offF fl (wL L).val (2 * t1.val) (2 * k.val + 1)) 2 28) (shapeCast S16 (pair0_last.sl.v2121_4 d L tab t1 k r g1 g2 hR hin h5) hc16) = AccMath.accVec (rowF fl tab (wL L).val (2 * t1.val) (2 * k.val + 1)) (offF fl (wL L).val (2 * t1.val) (2 * k.val + 1)) 2 29 :=
      acc_step d L fl tab (wL L).val (2 * t1.val) (2 * k.val + 1) 1 _ (hRB _) ⟨28, by decide⟩ ⟨2, by decide⟩ _ rfl _ hwB_28 _ (k1_off48_form ⟨1, by decide⟩ _ _) _ hc16
    have sB2_29 : addf (AccMath.accVec (rowF fl tab (wL L).val (2 * t1.val) (2 * k.val + 1)) (offF fl (wL L).val (2 * t1.val) (2 * k.val + 1)) 2 29) (shapeCast S16 (pair0_last.sl.v2157_4 d L tab t1 k r g1 g2 hR hin h5) hc16) = AccMath.accVec (rowF fl tab (wL L).val (2 * t1.val) (2 * k.val + 1)) (offF fl (wL L).val (2 * t1.val) (2 * k.val + 1)) 2 30 :=
      acc_step d L fl tab (wL L).val (2 * t1.val) (2 * k.val + 1) 1 _ (hRB _) ⟨29, by decide⟩ ⟨2, by decide⟩ _ rfl _ hwB_29 _ (k1_off49_form ⟨1, by decide⟩ _ _) _ hc16
    have sB2_30 : addf (AccMath.accVec (rowF fl tab (wL L).val (2 * t1.val) (2 * k.val + 1)) (offF fl (wL L).val (2 * t1.val) (2 * k.val + 1)) 2 30) (shapeCast S16 (pair0_last.sl.v2193_4 d L tab t1 k r g1 g2 hR hin h5) hc16) = AccMath.accVec (rowF fl tab (wL L).val (2 * t1.val) (2 * k.val + 1)) (offF fl (wL L).val (2 * t1.val) (2 * k.val + 1)) 2 31 :=
      acc_step d L fl tab (wL L).val (2 * t1.val) (2 * k.val + 1) 1 _ (hRB _) ⟨30, by decide⟩ ⟨2, by decide⟩ _ rfl _ hwB_30 _ (k1_off50_form ⟨1, by decide⟩ _ _) _ hc16
    have sB2_31 : addf (AccMath.accVec (rowF fl tab (wL L).val (2 * t1.val) (2 * k.val + 1)) (offF fl (wL L).val (2 * t1.val) (2 * k.val + 1)) 2 31) (shapeCast S16 (pair0_last.sl.v2229_4 d L tab t1 k r g1 g2 hR hin h5) hc16) = AccMath.accVec (rowF fl tab (wL L).val (2 * t1.val) (2 * k.val + 1)) (offF fl (wL L).val (2 * t1.val) (2 * k.val + 1)) 2 32 :=
      acc_step d L fl tab (wL L).val (2 * t1.val) (2 * k.val + 1) 1 _ (hRB _) ⟨31, by decide⟩ ⟨2, by decide⟩ _ rfl _ hwB_31 _ (k1_off51_form ⟨1, by decide⟩ _ _) _ hc16
    have sB2_32 : addf (AccMath.accVec (rowF fl tab (wL L).val (2 * t1.val) (2 * k.val + 1)) (offF fl (wL L).val (2 * t1.val) (2 * k.val + 1)) 2 32) (shapeCast S16 (pair0_last.sl.v1689_5 d L tab t1 k r g1 g2 hR hin h5) hc16) = AccMath.accVec (rowF fl tab (wL L).val (2 * t1.val) (2 * k.val + 1)) (offF fl (wL L).val (2 * t1.val) (2 * k.val + 1)) 2 33 :=
      acc_step d L fl tab (wL L).val (2 * t1.val) (2 * k.val + 1) 1 _ (hRB _) ⟨32, by decide⟩ ⟨2, by decide⟩ _ rfl _ hwB_32 _ (k1_off36_form ⟨2, by decide⟩ _ _) _ hc16
    have sB2_33 : addf (AccMath.accVec (rowF fl tab (wL L).val (2 * t1.val) (2 * k.val + 1)) (offF fl (wL L).val (2 * t1.val) (2 * k.val + 1)) 2 33) (shapeCast S16 (pair0_last.sl.v1725_5 d L tab t1 k r g1 g2 hR hin h5) hc16) = AccMath.accVec (rowF fl tab (wL L).val (2 * t1.val) (2 * k.val + 1)) (offF fl (wL L).val (2 * t1.val) (2 * k.val + 1)) 2 34 :=
      acc_step d L fl tab (wL L).val (2 * t1.val) (2 * k.val + 1) 1 _ (hRB _) ⟨33, by decide⟩ ⟨2, by decide⟩ _ rfl _ hwB_33 _ (k1_off37_form ⟨2, by decide⟩ _ _) _ hc16
    have sB2_34 : addf (AccMath.accVec (rowF fl tab (wL L).val (2 * t1.val) (2 * k.val + 1)) (offF fl (wL L).val (2 * t1.val) (2 * k.val + 1)) 2 34) (shapeCast S16 (pair0_last.sl.v1761_5 d L tab t1 k r g1 g2 hR hin h5) hc16) = AccMath.accVec (rowF fl tab (wL L).val (2 * t1.val) (2 * k.val + 1)) (offF fl (wL L).val (2 * t1.val) (2 * k.val + 1)) 2 35 :=
      acc_step d L fl tab (wL L).val (2 * t1.val) (2 * k.val + 1) 1 _ (hRB _) ⟨34, by decide⟩ ⟨2, by decide⟩ _ rfl _ hwB_34 _ (k1_off38_form ⟨2, by decide⟩ _ _) _ hc16
    have sB2_35 : addf (AccMath.accVec (rowF fl tab (wL L).val (2 * t1.val) (2 * k.val + 1)) (offF fl (wL L).val (2 * t1.val) (2 * k.val + 1)) 2 35) (shapeCast S16 (pair0_last.sl.v1797_5 d L tab t1 k r g1 g2 hR hin h5) hc16) = AccMath.accVec (rowF fl tab (wL L).val (2 * t1.val) (2 * k.val + 1)) (offF fl (wL L).val (2 * t1.val) (2 * k.val + 1)) 2 36 :=
      acc_step d L fl tab (wL L).val (2 * t1.val) (2 * k.val + 1) 1 _ (hRB _) ⟨35, by decide⟩ ⟨2, by decide⟩ _ rfl _ hwB_35 _ (k1_off39_form ⟨2, by decide⟩ _ _) _ hc16
    have sB2_36 : addf (AccMath.accVec (rowF fl tab (wL L).val (2 * t1.val) (2 * k.val + 1)) (offF fl (wL L).val (2 * t1.val) (2 * k.val + 1)) 2 36) (shapeCast S16 (pair0_last.sl.v1833_5 d L tab t1 k r g1 g2 hR hin h5) hc16) = AccMath.accVec (rowF fl tab (wL L).val (2 * t1.val) (2 * k.val + 1)) (offF fl (wL L).val (2 * t1.val) (2 * k.val + 1)) 2 37 :=
      acc_step d L fl tab (wL L).val (2 * t1.val) (2 * k.val + 1) 1 _ (hRB _) ⟨36, by decide⟩ ⟨2, by decide⟩ _ rfl _ hwB_36 _ (k1_off40_form ⟨2, by decide⟩ _ _) _ hc16
    have sB2_37 : addf (AccMath.accVec (rowF fl tab (wL L).val (2 * t1.val) (2 * k.val + 1)) (offF fl (wL L).val (2 * t1.val) (2 * k.val + 1)) 2 37) (shapeCast S16 (pair0_last.sl.v1869_5 d L tab t1 k r g1 g2 hR hin h5) hc16) = AccMath.accVec (rowF fl tab (wL L).val (2 * t1.val) (2 * k.val + 1)) (offF fl (wL L).val (2 * t1.val) (2 * k.val + 1)) 2 38 :=
      acc_step d L fl tab (wL L).val (2 * t1.val) (2 * k.val + 1) 1 _ (hRB _) ⟨37, by decide⟩ ⟨2, by decide⟩ _ rfl _ hwB_37 _ (k1_off41_form ⟨2, by decide⟩ _ _) _ hc16
    have sB2_38 : addf (AccMath.accVec (rowF fl tab (wL L).val (2 * t1.val) (2 * k.val + 1)) (offF fl (wL L).val (2 * t1.val) (2 * k.val + 1)) 2 38) (shapeCast S16 (pair0_last.sl.v1905_5 d L tab t1 k r g1 g2 hR hin h5) hc16) = AccMath.accVec (rowF fl tab (wL L).val (2 * t1.val) (2 * k.val + 1)) (offF fl (wL L).val (2 * t1.val) (2 * k.val + 1)) 2 39 :=
      acc_step d L fl tab (wL L).val (2 * t1.val) (2 * k.val + 1) 1 _ (hRB _) ⟨38, by decide⟩ ⟨2, by decide⟩ _ rfl _ hwB_38 _ (k1_off42_form ⟨2, by decide⟩ _ _) _ hc16
    have sB2_39 : addf (AccMath.accVec (rowF fl tab (wL L).val (2 * t1.val) (2 * k.val + 1)) (offF fl (wL L).val (2 * t1.val) (2 * k.val + 1)) 2 39) (shapeCast S16 (pair0_last.sl.v1941_5 d L tab t1 k r g1 g2 hR hin h5) hc16) = AccMath.accVec (rowF fl tab (wL L).val (2 * t1.val) (2 * k.val + 1)) (offF fl (wL L).val (2 * t1.val) (2 * k.val + 1)) 2 40 :=
      acc_step d L fl tab (wL L).val (2 * t1.val) (2 * k.val + 1) 1 _ (hRB _) ⟨39, by decide⟩ ⟨2, by decide⟩ _ rfl _ hwB_39 _ (k1_off43_form ⟨2, by decide⟩ _ _) _ hc16
    have sB2_40 : addf (AccMath.accVec (rowF fl tab (wL L).val (2 * t1.val) (2 * k.val + 1)) (offF fl (wL L).val (2 * t1.val) (2 * k.val + 1)) 2 40) (shapeCast S16 (pair0_last.sl.v1977_5 d L tab t1 k r g1 g2 hR hin h5) hc16) = AccMath.accVec (rowF fl tab (wL L).val (2 * t1.val) (2 * k.val + 1)) (offF fl (wL L).val (2 * t1.val) (2 * k.val + 1)) 2 41 :=
      acc_step d L fl tab (wL L).val (2 * t1.val) (2 * k.val + 1) 1 _ (hRB _) ⟨40, by decide⟩ ⟨2, by decide⟩ _ rfl _ hwB_40 _ (k1_off44_form ⟨2, by decide⟩ _ _) _ hc16
    have sB2_41 : addf (AccMath.accVec (rowF fl tab (wL L).val (2 * t1.val) (2 * k.val + 1)) (offF fl (wL L).val (2 * t1.val) (2 * k.val + 1)) 2 41) (shapeCast S16 (pair0_last.sl.v2013_5 d L tab t1 k r g1 g2 hR hin h5) hc16) = AccMath.accVec (rowF fl tab (wL L).val (2 * t1.val) (2 * k.val + 1)) (offF fl (wL L).val (2 * t1.val) (2 * k.val + 1)) 2 42 :=
      acc_step d L fl tab (wL L).val (2 * t1.val) (2 * k.val + 1) 1 _ (hRB _) ⟨41, by decide⟩ ⟨2, by decide⟩ _ rfl _ hwB_41 _ (k1_off45_form ⟨2, by decide⟩ _ _) _ hc16
    have sB2_42 : addf (AccMath.accVec (rowF fl tab (wL L).val (2 * t1.val) (2 * k.val + 1)) (offF fl (wL L).val (2 * t1.val) (2 * k.val + 1)) 2 42) (shapeCast S16 (pair0_last.sl.v2049_5 d L tab t1 k r g1 g2 hR hin h5) hc16) = AccMath.accVec (rowF fl tab (wL L).val (2 * t1.val) (2 * k.val + 1)) (offF fl (wL L).val (2 * t1.val) (2 * k.val + 1)) 2 43 :=
      acc_step d L fl tab (wL L).val (2 * t1.val) (2 * k.val + 1) 1 _ (hRB _) ⟨42, by decide⟩ ⟨2, by decide⟩ _ rfl _ hwB_42 _ (k1_off46_form ⟨2, by decide⟩ _ _) _ hc16
    have sB2_43 : addf (AccMath.accVec (rowF fl tab (wL L).val (2 * t1.val) (2 * k.val + 1)) (offF fl (wL L).val (2 * t1.val) (2 * k.val + 1)) 2 43) (shapeCast S16 (pair0_last.sl.v2085_5 d L tab t1 k r g1 g2 hR hin h5) hc16) = AccMath.accVec (rowF fl tab (wL L).val (2 * t1.val) (2 * k.val + 1)) (offF fl (wL L).val (2 * t1.val) (2 * k.val + 1)) 2 44 :=
      acc_step d L fl tab (wL L).val (2 * t1.val) (2 * k.val + 1) 1 _ (hRB _) ⟨43, by decide⟩ ⟨2, by decide⟩ _ rfl _ hwB_43 _ (k1_off47_form ⟨2, by decide⟩ _ _) _ hc16
    have sB2_44 : addf (AccMath.accVec (rowF fl tab (wL L).val (2 * t1.val) (2 * k.val + 1)) (offF fl (wL L).val (2 * t1.val) (2 * k.val + 1)) 2 44) (shapeCast S16 (pair0_last.sl.v2121_5 d L tab t1 k r g1 g2 hR hin h5) hc16) = AccMath.accVec (rowF fl tab (wL L).val (2 * t1.val) (2 * k.val + 1)) (offF fl (wL L).val (2 * t1.val) (2 * k.val + 1)) 2 45 :=
      acc_step d L fl tab (wL L).val (2 * t1.val) (2 * k.val + 1) 1 _ (hRB _) ⟨44, by decide⟩ ⟨2, by decide⟩ _ rfl _ hwB_44 _ (k1_off48_form ⟨2, by decide⟩ _ _) _ hc16
    have sB2_45 : addf (AccMath.accVec (rowF fl tab (wL L).val (2 * t1.val) (2 * k.val + 1)) (offF fl (wL L).val (2 * t1.val) (2 * k.val + 1)) 2 45) (shapeCast S16 (pair0_last.sl.v2157_5 d L tab t1 k r g1 g2 hR hin h5) hc16) = AccMath.accVec (rowF fl tab (wL L).val (2 * t1.val) (2 * k.val + 1)) (offF fl (wL L).val (2 * t1.val) (2 * k.val + 1)) 2 46 :=
      acc_step d L fl tab (wL L).val (2 * t1.val) (2 * k.val + 1) 1 _ (hRB _) ⟨45, by decide⟩ ⟨2, by decide⟩ _ rfl _ hwB_45 _ (k1_off49_form ⟨2, by decide⟩ _ _) _ hc16
    have sB2_46 : addf (AccMath.accVec (rowF fl tab (wL L).val (2 * t1.val) (2 * k.val + 1)) (offF fl (wL L).val (2 * t1.val) (2 * k.val + 1)) 2 46) (shapeCast S16 (pair0_last.sl.v2193_5 d L tab t1 k r g1 g2 hR hin h5) hc16) = AccMath.accVec (rowF fl tab (wL L).val (2 * t1.val) (2 * k.val + 1)) (offF fl (wL L).val (2 * t1.val) (2 * k.val + 1)) 2 47 :=
      acc_step d L fl tab (wL L).val (2 * t1.val) (2 * k.val + 1) 1 _ (hRB _) ⟨46, by decide⟩ ⟨2, by decide⟩ _ rfl _ hwB_46 _ (k1_off50_form ⟨2, by decide⟩ _ _) _ hc16
    have sB2_47 : addf (AccMath.accVec (rowF fl tab (wL L).val (2 * t1.val) (2 * k.val + 1)) (offF fl (wL L).val (2 * t1.val) (2 * k.val + 1)) 2 47) (shapeCast S16 (pair0_last.sl.v2229_5 d L tab t1 k r g1 g2 hR hin h5) hc16) = AccMath.accVec (rowF fl tab (wL L).val (2 * t1.val) (2 * k.val + 1)) (offF fl (wL L).val (2 * t1.val) (2 * k.val + 1)) 2 48 :=
      acc_step d L fl tab (wL L).val (2 * t1.val) (2 * k.val + 1) 1 _ (hRB _) ⟨47, by decide⟩ ⟨2, by decide⟩ _ rfl _ hwB_47 _ (k1_off51_form ⟨2, by decide⟩ _ _) _ hc16
    have sB2_48 : addf (AccMath.accVec (rowF fl tab (wL L).val (2 * t1.val) (2 * k.val + 1)) (offF fl (wL L).val (2 * t1.val) (2 * k.val + 1)) 2 48) (shapeCast S16 (pair0_last.sl.v1594 d L tab t1 k r g1 g2 hR hin h5) hc16) = AccMath.accVec (rowF fl tab (wL L).val (2 * t1.val) (2 * k.val + 1)) (offF fl (wL L).val (2 * t1.val) (2 * k.val + 1)) 2 49 :=
      acc_step d L fl tab (wL L).val (2 * t1.val) (2 * k.val + 1) 1 _ (hRB _) ⟨48, by decide⟩ ⟨2, by decide⟩ _ rfl _ hwB_48 _ (k1_off53_form _ _) _ hc16
    have sB2_49 : addf (AccMath.accVec (rowF fl tab (wL L).val (2 * t1.val) (2 * k.val + 1)) (offF fl (wL L).val (2 * t1.val) (2 * k.val + 1)) 2 49) (shapeCast S16 (pair0_last.sl.v1628 d L tab t1 k r g1 g2 hR hin h5) hc16) = AccMath.accVec (rowF fl tab (wL L).val (2 * t1.val) (2 * k.val + 1)) (offF fl (wL L).val (2 * t1.val) (2 * k.val + 1)) 2 50 :=
      acc_step d L fl tab (wL L).val (2 * t1.val) (2 * k.val + 1) 1 _ (hRB _) ⟨49, by decide⟩ ⟨2, by decide⟩ _ rfl _ hwB_49 _ (k1_off54_form _ _) _ hc16
    have hPB2 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val + 1)) (offF fl (wL L).val (2 * t1.val) (2 * k.val + 1)) 2 0) (shapeCast S16 (pair0_last.sl.v1689_3 d L tab t1 k r g1 g2 hR hin h5) hc16)) (shapeCast S16 (pair0_last.sl.v1725_3 d L tab t1 k r g1 g2 hR hin h5) hc16)) (shapeCast S16 (pair0_last.sl.v1761_3 d L tab t1 k r g1 g2 hR hin h5) hc16)) (shapeCast S16 (pair0_last.sl.v1797_3 d L tab t1 k r g1 g2 hR hin h5) hc16)) (shapeCast S16 (pair0_last.sl.v1833_3 d L tab t1 k r g1 g2 hR hin h5) hc16)) (shapeCast S16 (pair0_last.sl.v1869_3 d L tab t1 k r g1 g2 hR hin h5) hc16)) (shapeCast S16 (pair0_last.sl.v1905_3 d L tab t1 k r g1 g2 hR hin h5) hc16)) (shapeCast S16 (pair0_last.sl.v1941_3 d L tab t1 k r g1 g2 hR hin h5) hc16)) (shapeCast S16 (pair0_last.sl.v1977_3 d L tab t1 k r g1 g2 hR hin h5) hc16)) (shapeCast S16 (pair0_last.sl.v2013_3 d L tab t1 k r g1 g2 hR hin h5) hc16)) (shapeCast S16 (pair0_last.sl.v2049_3 d L tab t1 k r g1 g2 hR hin h5) hc16)) (shapeCast S16 (pair0_last.sl.v2085_3 d L tab t1 k r g1 g2 hR hin h5) hc16)) (shapeCast S16 (pair0_last.sl.v2121_3 d L tab t1 k r g1 g2 hR hin h5) hc16)) (shapeCast S16 (pair0_last.sl.v2157_3 d L tab t1 k r g1 g2 hR hin h5) hc16)) (shapeCast S16 (pair0_last.sl.v2193_3 d L tab t1 k r g1 g2 hR hin h5) hc16)) (shapeCast S16 (pair0_last.sl.v2229_3 d L tab t1 k r g1 g2 hR hin h5) hc16)) (shapeCast S16 (pair0_last.sl.v1689_4 d L tab t1 k r g1 g2 hR hin h5) hc16)) (shapeCast S16 (pair0_last.sl.v1725_4 d L tab t1 k r g1 g2 hR hin h5) hc16)) (shapeCast S16 (pair0_last.sl.v1761_4 d L tab t1 k r g1 g2 hR hin h5) hc16)) (shapeCast S16 (pair0_last.sl.v1797_4 d L tab t1 k r g1 g2 hR hin h5) hc16)) (shapeCast S16 (pair0_last.sl.v1833_4 d L tab t1 k r g1 g2 hR hin h5) hc16)) (shapeCast S16 (pair0_last.sl.v1869_4 d L tab t1 k r g1 g2 hR hin h5) hc16)) (shapeCast S16 (pair0_last.sl.v1905_4 d L tab t1 k r g1 g2 hR hin h5) hc16)) (shapeCast S16 (pair0_last.sl.v1941_4 d L tab t1 k r g1 g2 hR hin h5) hc16)) (shapeCast S16 (pair0_last.sl.v1977_4 d L tab t1 k r g1 g2 hR hin h5) hc16)) (shapeCast S16 (pair0_last.sl.v2013_4 d L tab t1 k r g1 g2 hR hin h5) hc16)) (shapeCast S16 (pair0_last.sl.v2049_4 d L tab t1 k r g1 g2 hR hin h5) hc16)) (shapeCast S16 (pair0_last.sl.v2085_4 d L tab t1 k r g1 g2 hR hin h5) hc16)) (shapeCast S16 (pair0_last.sl.v2121_4 d L tab t1 k r g1 g2 hR hin h5) hc16)) (shapeCast S16 (pair0_last.sl.v2157_4 d L tab t1 k r g1 g2 hR hin h5) hc16)) (shapeCast S16 (pair0_last.sl.v2193_4 d L tab t1 k r g1 g2 hR hin h5) hc16)) (shapeCast S16 (pair0_last.sl.v2229_4 d L tab t1 k r g1 g2 hR hin h5) hc16)) (shapeCast S16 (pair0_last.sl.v1689_5 d L tab t1 k r g1 g2 hR hin h5) hc16)) (shapeCast S16 (pair0_last.sl.v1725_5 d L tab t1 k r g1 g2 hR hin h5) hc16)) (shapeCast S16 (pair0_last.sl.v1761_5 d L tab t1 k r g1 g2 hR hin h5) hc16)) (shapeCast S16 (pair0_last.sl.v1797_5 d L tab t1 k r g1 g2 hR hin h5) hc16)) (shapeCast S16 (pair0_last.sl.v1833_5 d L tab t1 k r g1 g2 hR hin h5) hc16)) (shapeCast S16 (pair0_last.sl.v1869_5 d L tab t1 k r g1 g2 hR hin h5) hc16)) (shapeCast S16 (pair0_last.sl.v1905_5 d L tab t1 k r g1 g2 hR hin h5) hc16)) (shapeCast S16 (pair0_last.sl.v1941_5 d L tab t1 k r g1 g2 hR hin h5) hc16)) (shapeCast S16 (pair0_last.sl.v1977_5 d L tab t1 k r g1 g2 hR hin h5) hc16)) (shapeCast S16 (pair0_last.sl.v2013_5 d L tab t1 k r g1 g2 hR hin h5) hc16)) (shapeCast S16 (pair0_last.sl.v2049_5 d L tab t1 k r g1 g2 hR hin h5) hc16)) (shapeCast S16 (pair0_last.sl.v2085_5 d L tab t1 k r g1 g2 hR hin h5) hc16)) (shapeCast S16 (pair0_last.sl.v2121_5 d L tab t1 k r g1 g2 hR hin h5) hc16)) (shapeCast S16 (pair0_last.sl.v2157_5 d L tab t1 k r g1 g2 hR hin h5) hc16)) (shapeCast S16 (pair0_last.sl.v2193_5 d L tab t1 k r g1 g2 hR hin h5) hc16)) (shapeCast S16 (pair0_last.sl.v2229_5 d L tab t1 k r g1 g2 hR hin h5) hc16)) (shapeCast S16 (pair0_last.sl.v1594 d L tab t1 k r g1 g2 hR hin h5) hc16)) (shapeCast S16 (pair0_last.sl.v1628 d L tab t1 k r g1 g2 hR hin h5) hc16)) hc1 x = Spec.bagPartial fl tab (128 * (wL L).val + 16 * (2 * t1.val) + (2 * k.val + 1)) (16 * 2 + (x 2).val) 50 := fun x => by
      rw [sB2_0, sB2_1, sB2_2, sB2_3, sB2_4, sB2_5, sB2_6, sB2_7, sB2_8, sB2_9, sB2_10, sB2_11, sB2_12, sB2_13, sB2_14, sB2_15, sB2_16, sB2_17, sB2_18, sB2_19, sB2_20, sB2_21, sB2_22, sB2_23, sB2_24, sB2_25, sB2_26, sB2_27, sB2_28, sB2_29, sB2_30, sB2_31, sB2_32, sB2_33, sB2_34, sB2_35, sB2_36, sB2_37, sB2_38, sB2_39, sB2_40, sB2_41, sB2_42, sB2_43, sB2_44, sB2_45, sB2_46, sB2_47, sB2_48, sB2_49]; exact payload_ok fl tab (wL L).val (2 * t1.val) (2 * k.val + 1) ⟨2, by decide⟩ hc1 x
    have sB3_0 : addf (AccMath.accVec (rowF fl tab (wL L).val (2 * t1.val) (2 * k.val + 1)) (offF fl (wL L).val (2 * t1.val) (2 * k.val + 1)) 3 0) (shapeCast S16 (pair0_last.sl.v1697_3 d L tab t1 k r g1 g2 hR hin h5) hc16) = AccMath.accVec (rowF fl tab (wL L).val (2 * t1.val) (2 * k.val + 1)) (offF fl (wL L).val (2 * t1.val) (2 * k.val + 1)) 3 1 :=
      acc_step d L fl tab (wL L).val (2 * t1.val) (2 * k.val + 1) 1 _ (hRB _) ⟨0, by decide⟩ ⟨3, by decide⟩ _ rfl _ hwB_0 _ (k1_off36_form ⟨0, by decide⟩ _ _) _ hc16
    have sB3_1 : addf (AccMath.accVec (rowF fl tab (wL L).val (2 * t1.val) (2 * k.val + 1)) (offF fl (wL L).val (2 * t1.val) (2 * k.val + 1)) 3 1) (shapeCast S16 (pair0_last.sl.v1733_3 d L tab t1 k r g1 g2 hR hin h5) hc16) = AccMath.accVec (rowF fl tab (wL L).val (2 * t1.val) (2 * k.val + 1)) (offF fl (wL L).val (2 * t1.val) (2 * k.val + 1)) 3 2 :=
      acc_step d L fl tab (wL L).val (2 * t1.val) (2 * k.val + 1) 1 _ (hRB _) ⟨1, by decide⟩ ⟨3, by decide⟩ _ rfl _ hwB_1 _ (k1_off37_form ⟨0, by decide⟩ _ _) _ hc16
    have sB3_2 : addf (AccMath.accVec (rowF fl tab (wL L).val (2 * t1.val) (2 * k.val + 1)) (offF fl (wL L).val (2 * t1.val) (2 * k.val + 1)) 3 2) (shapeCast S16 (pair0_last.sl.v1769_3 d L tab t1 k r g1 g2 hR hin h5) hc16) = AccMath.accVec (rowF fl tab (wL L).val (2 * t1.val) (2 * k.val + 1)) (offF fl (wL L).val (2 * t1.val) (2 * k.val + 1)) 3 3 :=
      acc_step d L fl tab (wL L).val (2 * t1.val) (2 * k.val + 1) 1 _ (hRB _) ⟨2, by decide⟩ ⟨3, by decide⟩ _ rfl _ hwB_2 _ (k1_off38_form ⟨0, by decide⟩ _ _) _ hc16
    have sB3_3 : addf (AccMath.accVec (rowF fl tab (wL L).val (2 * t1.val) (2 * k.val + 1)) (offF fl (wL L).val (2 * t1.val) (2 * k.val + 1)) 3 3) (shapeCast S16 (pair0_last.sl.v1805_3 d L tab t1 k r g1 g2 hR hin h5) hc16) = AccMath.accVec (rowF fl tab (wL L).val (2 * t1.val) (2 * k.val + 1)) (offF fl (wL L).val (2 * t1.val) (2 * k.val + 1)) 3 4 :=
      acc_step d L fl tab (wL L).val (2 * t1.val) (2 * k.val + 1) 1 _ (hRB _) ⟨3, by decide⟩ ⟨3, by decide⟩ _ rfl _ hwB_3 _ (k1_off39_form ⟨0, by decide⟩ _ _) _ hc16
    have sB3_4 : addf (AccMath.accVec (rowF fl tab (wL L).val (2 * t1.val) (2 * k.val + 1)) (offF fl (wL L).val (2 * t1.val) (2 * k.val + 1)) 3 4) (shapeCast S16 (pair0_last.sl.v1841_3 d L tab t1 k r g1 g2 hR hin h5) hc16) = AccMath.accVec (rowF fl tab (wL L).val (2 * t1.val) (2 * k.val + 1)) (offF fl (wL L).val (2 * t1.val) (2 * k.val + 1)) 3 5 :=
      acc_step d L fl tab (wL L).val (2 * t1.val) (2 * k.val + 1) 1 _ (hRB _) ⟨4, by decide⟩ ⟨3, by decide⟩ _ rfl _ hwB_4 _ (k1_off40_form ⟨0, by decide⟩ _ _) _ hc16
    have sB3_5 : addf (AccMath.accVec (rowF fl tab (wL L).val (2 * t1.val) (2 * k.val + 1)) (offF fl (wL L).val (2 * t1.val) (2 * k.val + 1)) 3 5) (shapeCast S16 (pair0_last.sl.v1877_3 d L tab t1 k r g1 g2 hR hin h5) hc16) = AccMath.accVec (rowF fl tab (wL L).val (2 * t1.val) (2 * k.val + 1)) (offF fl (wL L).val (2 * t1.val) (2 * k.val + 1)) 3 6 :=
      acc_step d L fl tab (wL L).val (2 * t1.val) (2 * k.val + 1) 1 _ (hRB _) ⟨5, by decide⟩ ⟨3, by decide⟩ _ rfl _ hwB_5 _ (k1_off41_form ⟨0, by decide⟩ _ _) _ hc16
    have sB3_6 : addf (AccMath.accVec (rowF fl tab (wL L).val (2 * t1.val) (2 * k.val + 1)) (offF fl (wL L).val (2 * t1.val) (2 * k.val + 1)) 3 6) (shapeCast S16 (pair0_last.sl.v1913_3 d L tab t1 k r g1 g2 hR hin h5) hc16) = AccMath.accVec (rowF fl tab (wL L).val (2 * t1.val) (2 * k.val + 1)) (offF fl (wL L).val (2 * t1.val) (2 * k.val + 1)) 3 7 :=
      acc_step d L fl tab (wL L).val (2 * t1.val) (2 * k.val + 1) 1 _ (hRB _) ⟨6, by decide⟩ ⟨3, by decide⟩ _ rfl _ hwB_6 _ (k1_off42_form ⟨0, by decide⟩ _ _) _ hc16
    have sB3_7 : addf (AccMath.accVec (rowF fl tab (wL L).val (2 * t1.val) (2 * k.val + 1)) (offF fl (wL L).val (2 * t1.val) (2 * k.val + 1)) 3 7) (shapeCast S16 (pair0_last.sl.v1949_3 d L tab t1 k r g1 g2 hR hin h5) hc16) = AccMath.accVec (rowF fl tab (wL L).val (2 * t1.val) (2 * k.val + 1)) (offF fl (wL L).val (2 * t1.val) (2 * k.val + 1)) 3 8 :=
      acc_step d L fl tab (wL L).val (2 * t1.val) (2 * k.val + 1) 1 _ (hRB _) ⟨7, by decide⟩ ⟨3, by decide⟩ _ rfl _ hwB_7 _ (k1_off43_form ⟨0, by decide⟩ _ _) _ hc16
    have sB3_8 : addf (AccMath.accVec (rowF fl tab (wL L).val (2 * t1.val) (2 * k.val + 1)) (offF fl (wL L).val (2 * t1.val) (2 * k.val + 1)) 3 8) (shapeCast S16 (pair0_last.sl.v1985_3 d L tab t1 k r g1 g2 hR hin h5) hc16) = AccMath.accVec (rowF fl tab (wL L).val (2 * t1.val) (2 * k.val + 1)) (offF fl (wL L).val (2 * t1.val) (2 * k.val + 1)) 3 9 :=
      acc_step d L fl tab (wL L).val (2 * t1.val) (2 * k.val + 1) 1 _ (hRB _) ⟨8, by decide⟩ ⟨3, by decide⟩ _ rfl _ hwB_8 _ (k1_off44_form ⟨0, by decide⟩ _ _) _ hc16
    have sB3_9 : addf (AccMath.accVec (rowF fl tab (wL L).val (2 * t1.val) (2 * k.val + 1)) (offF fl (wL L).val (2 * t1.val) (2 * k.val + 1)) 3 9) (shapeCast S16 (pair0_last.sl.v2021_3 d L tab t1 k r g1 g2 hR hin h5) hc16) = AccMath.accVec (rowF fl tab (wL L).val (2 * t1.val) (2 * k.val + 1)) (offF fl (wL L).val (2 * t1.val) (2 * k.val + 1)) 3 10 :=
      acc_step d L fl tab (wL L).val (2 * t1.val) (2 * k.val + 1) 1 _ (hRB _) ⟨9, by decide⟩ ⟨3, by decide⟩ _ rfl _ hwB_9 _ (k1_off45_form ⟨0, by decide⟩ _ _) _ hc16
    have sB3_10 : addf (AccMath.accVec (rowF fl tab (wL L).val (2 * t1.val) (2 * k.val + 1)) (offF fl (wL L).val (2 * t1.val) (2 * k.val + 1)) 3 10) (shapeCast S16 (pair0_last.sl.v2057_3 d L tab t1 k r g1 g2 hR hin h5) hc16) = AccMath.accVec (rowF fl tab (wL L).val (2 * t1.val) (2 * k.val + 1)) (offF fl (wL L).val (2 * t1.val) (2 * k.val + 1)) 3 11 :=
      acc_step d L fl tab (wL L).val (2 * t1.val) (2 * k.val + 1) 1 _ (hRB _) ⟨10, by decide⟩ ⟨3, by decide⟩ _ rfl _ hwB_10 _ (k1_off46_form ⟨0, by decide⟩ _ _) _ hc16
    have sB3_11 : addf (AccMath.accVec (rowF fl tab (wL L).val (2 * t1.val) (2 * k.val + 1)) (offF fl (wL L).val (2 * t1.val) (2 * k.val + 1)) 3 11) (shapeCast S16 (pair0_last.sl.v2093_3 d L tab t1 k r g1 g2 hR hin h5) hc16) = AccMath.accVec (rowF fl tab (wL L).val (2 * t1.val) (2 * k.val + 1)) (offF fl (wL L).val (2 * t1.val) (2 * k.val + 1)) 3 12 :=
      acc_step d L fl tab (wL L).val (2 * t1.val) (2 * k.val + 1) 1 _ (hRB _) ⟨11, by decide⟩ ⟨3, by decide⟩ _ rfl _ hwB_11 _ (k1_off47_form ⟨0, by decide⟩ _ _) _ hc16
    have sB3_12 : addf (AccMath.accVec (rowF fl tab (wL L).val (2 * t1.val) (2 * k.val + 1)) (offF fl (wL L).val (2 * t1.val) (2 * k.val + 1)) 3 12) (shapeCast S16 (pair0_last.sl.v2129_3 d L tab t1 k r g1 g2 hR hin h5) hc16) = AccMath.accVec (rowF fl tab (wL L).val (2 * t1.val) (2 * k.val + 1)) (offF fl (wL L).val (2 * t1.val) (2 * k.val + 1)) 3 13 :=
      acc_step d L fl tab (wL L).val (2 * t1.val) (2 * k.val + 1) 1 _ (hRB _) ⟨12, by decide⟩ ⟨3, by decide⟩ _ rfl _ hwB_12 _ (k1_off48_form ⟨0, by decide⟩ _ _) _ hc16
    have sB3_13 : addf (AccMath.accVec (rowF fl tab (wL L).val (2 * t1.val) (2 * k.val + 1)) (offF fl (wL L).val (2 * t1.val) (2 * k.val + 1)) 3 13) (shapeCast S16 (pair0_last.sl.v2165_3 d L tab t1 k r g1 g2 hR hin h5) hc16) = AccMath.accVec (rowF fl tab (wL L).val (2 * t1.val) (2 * k.val + 1)) (offF fl (wL L).val (2 * t1.val) (2 * k.val + 1)) 3 14 :=
      acc_step d L fl tab (wL L).val (2 * t1.val) (2 * k.val + 1) 1 _ (hRB _) ⟨13, by decide⟩ ⟨3, by decide⟩ _ rfl _ hwB_13 _ (k1_off49_form ⟨0, by decide⟩ _ _) _ hc16
    have sB3_14 : addf (AccMath.accVec (rowF fl tab (wL L).val (2 * t1.val) (2 * k.val + 1)) (offF fl (wL L).val (2 * t1.val) (2 * k.val + 1)) 3 14) (shapeCast S16 (pair0_last.sl.v2201_3 d L tab t1 k r g1 g2 hR hin h5) hc16) = AccMath.accVec (rowF fl tab (wL L).val (2 * t1.val) (2 * k.val + 1)) (offF fl (wL L).val (2 * t1.val) (2 * k.val + 1)) 3 15 :=
      acc_step d L fl tab (wL L).val (2 * t1.val) (2 * k.val + 1) 1 _ (hRB _) ⟨14, by decide⟩ ⟨3, by decide⟩ _ rfl _ hwB_14 _ (k1_off50_form ⟨0, by decide⟩ _ _) _ hc16
    have sB3_15 : addf (AccMath.accVec (rowF fl tab (wL L).val (2 * t1.val) (2 * k.val + 1)) (offF fl (wL L).val (2 * t1.val) (2 * k.val + 1)) 3 15) (shapeCast S16 (pair0_last.sl.v2237_3 d L tab t1 k r g1 g2 hR hin h5) hc16) = AccMath.accVec (rowF fl tab (wL L).val (2 * t1.val) (2 * k.val + 1)) (offF fl (wL L).val (2 * t1.val) (2 * k.val + 1)) 3 16 :=
      acc_step d L fl tab (wL L).val (2 * t1.val) (2 * k.val + 1) 1 _ (hRB _) ⟨15, by decide⟩ ⟨3, by decide⟩ _ rfl _ hwB_15 _ (k1_off51_form ⟨0, by decide⟩ _ _) _ hc16
    have sB3_16 : addf (AccMath.accVec (rowF fl tab (wL L).val (2 * t1.val) (2 * k.val + 1)) (offF fl (wL L).val (2 * t1.val) (2 * k.val + 1)) 3 16) (shapeCast S16 (pair0_last.sl.v1697_4 d L tab t1 k r g1 g2 hR hin h5) hc16) = AccMath.accVec (rowF fl tab (wL L).val (2 * t1.val) (2 * k.val + 1)) (offF fl (wL L).val (2 * t1.val) (2 * k.val + 1)) 3 17 :=
      acc_step d L fl tab (wL L).val (2 * t1.val) (2 * k.val + 1) 1 _ (hRB _) ⟨16, by decide⟩ ⟨3, by decide⟩ _ rfl _ hwB_16 _ (k1_off36_form ⟨1, by decide⟩ _ _) _ hc16
    have sB3_17 : addf (AccMath.accVec (rowF fl tab (wL L).val (2 * t1.val) (2 * k.val + 1)) (offF fl (wL L).val (2 * t1.val) (2 * k.val + 1)) 3 17) (shapeCast S16 (pair0_last.sl.v1733_4 d L tab t1 k r g1 g2 hR hin h5) hc16) = AccMath.accVec (rowF fl tab (wL L).val (2 * t1.val) (2 * k.val + 1)) (offF fl (wL L).val (2 * t1.val) (2 * k.val + 1)) 3 18 :=
      acc_step d L fl tab (wL L).val (2 * t1.val) (2 * k.val + 1) 1 _ (hRB _) ⟨17, by decide⟩ ⟨3, by decide⟩ _ rfl _ hwB_17 _ (k1_off37_form ⟨1, by decide⟩ _ _) _ hc16
    have sB3_18 : addf (AccMath.accVec (rowF fl tab (wL L).val (2 * t1.val) (2 * k.val + 1)) (offF fl (wL L).val (2 * t1.val) (2 * k.val + 1)) 3 18) (shapeCast S16 (pair0_last.sl.v1769_4 d L tab t1 k r g1 g2 hR hin h5) hc16) = AccMath.accVec (rowF fl tab (wL L).val (2 * t1.val) (2 * k.val + 1)) (offF fl (wL L).val (2 * t1.val) (2 * k.val + 1)) 3 19 :=
      acc_step d L fl tab (wL L).val (2 * t1.val) (2 * k.val + 1) 1 _ (hRB _) ⟨18, by decide⟩ ⟨3, by decide⟩ _ rfl _ hwB_18 _ (k1_off38_form ⟨1, by decide⟩ _ _) _ hc16
    have sB3_19 : addf (AccMath.accVec (rowF fl tab (wL L).val (2 * t1.val) (2 * k.val + 1)) (offF fl (wL L).val (2 * t1.val) (2 * k.val + 1)) 3 19) (shapeCast S16 (pair0_last.sl.v1805_4 d L tab t1 k r g1 g2 hR hin h5) hc16) = AccMath.accVec (rowF fl tab (wL L).val (2 * t1.val) (2 * k.val + 1)) (offF fl (wL L).val (2 * t1.val) (2 * k.val + 1)) 3 20 :=
      acc_step d L fl tab (wL L).val (2 * t1.val) (2 * k.val + 1) 1 _ (hRB _) ⟨19, by decide⟩ ⟨3, by decide⟩ _ rfl _ hwB_19 _ (k1_off39_form ⟨1, by decide⟩ _ _) _ hc16
    have sB3_20 : addf (AccMath.accVec (rowF fl tab (wL L).val (2 * t1.val) (2 * k.val + 1)) (offF fl (wL L).val (2 * t1.val) (2 * k.val + 1)) 3 20) (shapeCast S16 (pair0_last.sl.v1841_4 d L tab t1 k r g1 g2 hR hin h5) hc16) = AccMath.accVec (rowF fl tab (wL L).val (2 * t1.val) (2 * k.val + 1)) (offF fl (wL L).val (2 * t1.val) (2 * k.val + 1)) 3 21 :=
      acc_step d L fl tab (wL L).val (2 * t1.val) (2 * k.val + 1) 1 _ (hRB _) ⟨20, by decide⟩ ⟨3, by decide⟩ _ rfl _ hwB_20 _ (k1_off40_form ⟨1, by decide⟩ _ _) _ hc16
    have sB3_21 : addf (AccMath.accVec (rowF fl tab (wL L).val (2 * t1.val) (2 * k.val + 1)) (offF fl (wL L).val (2 * t1.val) (2 * k.val + 1)) 3 21) (shapeCast S16 (pair0_last.sl.v1877_4 d L tab t1 k r g1 g2 hR hin h5) hc16) = AccMath.accVec (rowF fl tab (wL L).val (2 * t1.val) (2 * k.val + 1)) (offF fl (wL L).val (2 * t1.val) (2 * k.val + 1)) 3 22 :=
      acc_step d L fl tab (wL L).val (2 * t1.val) (2 * k.val + 1) 1 _ (hRB _) ⟨21, by decide⟩ ⟨3, by decide⟩ _ rfl _ hwB_21 _ (k1_off41_form ⟨1, by decide⟩ _ _) _ hc16
    have sB3_22 : addf (AccMath.accVec (rowF fl tab (wL L).val (2 * t1.val) (2 * k.val + 1)) (offF fl (wL L).val (2 * t1.val) (2 * k.val + 1)) 3 22) (shapeCast S16 (pair0_last.sl.v1913_4 d L tab t1 k r g1 g2 hR hin h5) hc16) = AccMath.accVec (rowF fl tab (wL L).val (2 * t1.val) (2 * k.val + 1)) (offF fl (wL L).val (2 * t1.val) (2 * k.val + 1)) 3 23 :=
      acc_step d L fl tab (wL L).val (2 * t1.val) (2 * k.val + 1) 1 _ (hRB _) ⟨22, by decide⟩ ⟨3, by decide⟩ _ rfl _ hwB_22 _ (k1_off42_form ⟨1, by decide⟩ _ _) _ hc16
    have sB3_23 : addf (AccMath.accVec (rowF fl tab (wL L).val (2 * t1.val) (2 * k.val + 1)) (offF fl (wL L).val (2 * t1.val) (2 * k.val + 1)) 3 23) (shapeCast S16 (pair0_last.sl.v1949_4 d L tab t1 k r g1 g2 hR hin h5) hc16) = AccMath.accVec (rowF fl tab (wL L).val (2 * t1.val) (2 * k.val + 1)) (offF fl (wL L).val (2 * t1.val) (2 * k.val + 1)) 3 24 :=
      acc_step d L fl tab (wL L).val (2 * t1.val) (2 * k.val + 1) 1 _ (hRB _) ⟨23, by decide⟩ ⟨3, by decide⟩ _ rfl _ hwB_23 _ (k1_off43_form ⟨1, by decide⟩ _ _) _ hc16
    have sB3_24 : addf (AccMath.accVec (rowF fl tab (wL L).val (2 * t1.val) (2 * k.val + 1)) (offF fl (wL L).val (2 * t1.val) (2 * k.val + 1)) 3 24) (shapeCast S16 (pair0_last.sl.v1985_4 d L tab t1 k r g1 g2 hR hin h5) hc16) = AccMath.accVec (rowF fl tab (wL L).val (2 * t1.val) (2 * k.val + 1)) (offF fl (wL L).val (2 * t1.val) (2 * k.val + 1)) 3 25 :=
      acc_step d L fl tab (wL L).val (2 * t1.val) (2 * k.val + 1) 1 _ (hRB _) ⟨24, by decide⟩ ⟨3, by decide⟩ _ rfl _ hwB_24 _ (k1_off44_form ⟨1, by decide⟩ _ _) _ hc16
    have sB3_25 : addf (AccMath.accVec (rowF fl tab (wL L).val (2 * t1.val) (2 * k.val + 1)) (offF fl (wL L).val (2 * t1.val) (2 * k.val + 1)) 3 25) (shapeCast S16 (pair0_last.sl.v2021_4 d L tab t1 k r g1 g2 hR hin h5) hc16) = AccMath.accVec (rowF fl tab (wL L).val (2 * t1.val) (2 * k.val + 1)) (offF fl (wL L).val (2 * t1.val) (2 * k.val + 1)) 3 26 :=
      acc_step d L fl tab (wL L).val (2 * t1.val) (2 * k.val + 1) 1 _ (hRB _) ⟨25, by decide⟩ ⟨3, by decide⟩ _ rfl _ hwB_25 _ (k1_off45_form ⟨1, by decide⟩ _ _) _ hc16
    have sB3_26 : addf (AccMath.accVec (rowF fl tab (wL L).val (2 * t1.val) (2 * k.val + 1)) (offF fl (wL L).val (2 * t1.val) (2 * k.val + 1)) 3 26) (shapeCast S16 (pair0_last.sl.v2057_4 d L tab t1 k r g1 g2 hR hin h5) hc16) = AccMath.accVec (rowF fl tab (wL L).val (2 * t1.val) (2 * k.val + 1)) (offF fl (wL L).val (2 * t1.val) (2 * k.val + 1)) 3 27 :=
      acc_step d L fl tab (wL L).val (2 * t1.val) (2 * k.val + 1) 1 _ (hRB _) ⟨26, by decide⟩ ⟨3, by decide⟩ _ rfl _ hwB_26 _ (k1_off46_form ⟨1, by decide⟩ _ _) _ hc16
    have sB3_27 : addf (AccMath.accVec (rowF fl tab (wL L).val (2 * t1.val) (2 * k.val + 1)) (offF fl (wL L).val (2 * t1.val) (2 * k.val + 1)) 3 27) (shapeCast S16 (pair0_last.sl.v2093_4 d L tab t1 k r g1 g2 hR hin h5) hc16) = AccMath.accVec (rowF fl tab (wL L).val (2 * t1.val) (2 * k.val + 1)) (offF fl (wL L).val (2 * t1.val) (2 * k.val + 1)) 3 28 :=
      acc_step d L fl tab (wL L).val (2 * t1.val) (2 * k.val + 1) 1 _ (hRB _) ⟨27, by decide⟩ ⟨3, by decide⟩ _ rfl _ hwB_27 _ (k1_off47_form ⟨1, by decide⟩ _ _) _ hc16
    have sB3_28 : addf (AccMath.accVec (rowF fl tab (wL L).val (2 * t1.val) (2 * k.val + 1)) (offF fl (wL L).val (2 * t1.val) (2 * k.val + 1)) 3 28) (shapeCast S16 (pair0_last.sl.v2129_4 d L tab t1 k r g1 g2 hR hin h5) hc16) = AccMath.accVec (rowF fl tab (wL L).val (2 * t1.val) (2 * k.val + 1)) (offF fl (wL L).val (2 * t1.val) (2 * k.val + 1)) 3 29 :=
      acc_step d L fl tab (wL L).val (2 * t1.val) (2 * k.val + 1) 1 _ (hRB _) ⟨28, by decide⟩ ⟨3, by decide⟩ _ rfl _ hwB_28 _ (k1_off48_form ⟨1, by decide⟩ _ _) _ hc16
    have sB3_29 : addf (AccMath.accVec (rowF fl tab (wL L).val (2 * t1.val) (2 * k.val + 1)) (offF fl (wL L).val (2 * t1.val) (2 * k.val + 1)) 3 29) (shapeCast S16 (pair0_last.sl.v2165_4 d L tab t1 k r g1 g2 hR hin h5) hc16) = AccMath.accVec (rowF fl tab (wL L).val (2 * t1.val) (2 * k.val + 1)) (offF fl (wL L).val (2 * t1.val) (2 * k.val + 1)) 3 30 :=
      acc_step d L fl tab (wL L).val (2 * t1.val) (2 * k.val + 1) 1 _ (hRB _) ⟨29, by decide⟩ ⟨3, by decide⟩ _ rfl _ hwB_29 _ (k1_off49_form ⟨1, by decide⟩ _ _) _ hc16
    have sB3_30 : addf (AccMath.accVec (rowF fl tab (wL L).val (2 * t1.val) (2 * k.val + 1)) (offF fl (wL L).val (2 * t1.val) (2 * k.val + 1)) 3 30) (shapeCast S16 (pair0_last.sl.v2201_4 d L tab t1 k r g1 g2 hR hin h5) hc16) = AccMath.accVec (rowF fl tab (wL L).val (2 * t1.val) (2 * k.val + 1)) (offF fl (wL L).val (2 * t1.val) (2 * k.val + 1)) 3 31 :=
      acc_step d L fl tab (wL L).val (2 * t1.val) (2 * k.val + 1) 1 _ (hRB _) ⟨30, by decide⟩ ⟨3, by decide⟩ _ rfl _ hwB_30 _ (k1_off50_form ⟨1, by decide⟩ _ _) _ hc16
    have sB3_31 : addf (AccMath.accVec (rowF fl tab (wL L).val (2 * t1.val) (2 * k.val + 1)) (offF fl (wL L).val (2 * t1.val) (2 * k.val + 1)) 3 31) (shapeCast S16 (pair0_last.sl.v2237_4 d L tab t1 k r g1 g2 hR hin h5) hc16) = AccMath.accVec (rowF fl tab (wL L).val (2 * t1.val) (2 * k.val + 1)) (offF fl (wL L).val (2 * t1.val) (2 * k.val + 1)) 3 32 :=
      acc_step d L fl tab (wL L).val (2 * t1.val) (2 * k.val + 1) 1 _ (hRB _) ⟨31, by decide⟩ ⟨3, by decide⟩ _ rfl _ hwB_31 _ (k1_off51_form ⟨1, by decide⟩ _ _) _ hc16
    have sB3_32 : addf (AccMath.accVec (rowF fl tab (wL L).val (2 * t1.val) (2 * k.val + 1)) (offF fl (wL L).val (2 * t1.val) (2 * k.val + 1)) 3 32) (shapeCast S16 (pair0_last.sl.v1697_5 d L tab t1 k r g1 g2 hR hin h5) hc16) = AccMath.accVec (rowF fl tab (wL L).val (2 * t1.val) (2 * k.val + 1)) (offF fl (wL L).val (2 * t1.val) (2 * k.val + 1)) 3 33 :=
      acc_step d L fl tab (wL L).val (2 * t1.val) (2 * k.val + 1) 1 _ (hRB _) ⟨32, by decide⟩ ⟨3, by decide⟩ _ rfl _ hwB_32 _ (k1_off36_form ⟨2, by decide⟩ _ _) _ hc16
    have sB3_33 : addf (AccMath.accVec (rowF fl tab (wL L).val (2 * t1.val) (2 * k.val + 1)) (offF fl (wL L).val (2 * t1.val) (2 * k.val + 1)) 3 33) (shapeCast S16 (pair0_last.sl.v1733_5 d L tab t1 k r g1 g2 hR hin h5) hc16) = AccMath.accVec (rowF fl tab (wL L).val (2 * t1.val) (2 * k.val + 1)) (offF fl (wL L).val (2 * t1.val) (2 * k.val + 1)) 3 34 :=
      acc_step d L fl tab (wL L).val (2 * t1.val) (2 * k.val + 1) 1 _ (hRB _) ⟨33, by decide⟩ ⟨3, by decide⟩ _ rfl _ hwB_33 _ (k1_off37_form ⟨2, by decide⟩ _ _) _ hc16
    have sB3_34 : addf (AccMath.accVec (rowF fl tab (wL L).val (2 * t1.val) (2 * k.val + 1)) (offF fl (wL L).val (2 * t1.val) (2 * k.val + 1)) 3 34) (shapeCast S16 (pair0_last.sl.v1769_5 d L tab t1 k r g1 g2 hR hin h5) hc16) = AccMath.accVec (rowF fl tab (wL L).val (2 * t1.val) (2 * k.val + 1)) (offF fl (wL L).val (2 * t1.val) (2 * k.val + 1)) 3 35 :=
      acc_step d L fl tab (wL L).val (2 * t1.val) (2 * k.val + 1) 1 _ (hRB _) ⟨34, by decide⟩ ⟨3, by decide⟩ _ rfl _ hwB_34 _ (k1_off38_form ⟨2, by decide⟩ _ _) _ hc16
    have sB3_35 : addf (AccMath.accVec (rowF fl tab (wL L).val (2 * t1.val) (2 * k.val + 1)) (offF fl (wL L).val (2 * t1.val) (2 * k.val + 1)) 3 35) (shapeCast S16 (pair0_last.sl.v1805_5 d L tab t1 k r g1 g2 hR hin h5) hc16) = AccMath.accVec (rowF fl tab (wL L).val (2 * t1.val) (2 * k.val + 1)) (offF fl (wL L).val (2 * t1.val) (2 * k.val + 1)) 3 36 :=
      acc_step d L fl tab (wL L).val (2 * t1.val) (2 * k.val + 1) 1 _ (hRB _) ⟨35, by decide⟩ ⟨3, by decide⟩ _ rfl _ hwB_35 _ (k1_off39_form ⟨2, by decide⟩ _ _) _ hc16
    have sB3_36 : addf (AccMath.accVec (rowF fl tab (wL L).val (2 * t1.val) (2 * k.val + 1)) (offF fl (wL L).val (2 * t1.val) (2 * k.val + 1)) 3 36) (shapeCast S16 (pair0_last.sl.v1841_5 d L tab t1 k r g1 g2 hR hin h5) hc16) = AccMath.accVec (rowF fl tab (wL L).val (2 * t1.val) (2 * k.val + 1)) (offF fl (wL L).val (2 * t1.val) (2 * k.val + 1)) 3 37 :=
      acc_step d L fl tab (wL L).val (2 * t1.val) (2 * k.val + 1) 1 _ (hRB _) ⟨36, by decide⟩ ⟨3, by decide⟩ _ rfl _ hwB_36 _ (k1_off40_form ⟨2, by decide⟩ _ _) _ hc16
    have sB3_37 : addf (AccMath.accVec (rowF fl tab (wL L).val (2 * t1.val) (2 * k.val + 1)) (offF fl (wL L).val (2 * t1.val) (2 * k.val + 1)) 3 37) (shapeCast S16 (pair0_last.sl.v1877_5 d L tab t1 k r g1 g2 hR hin h5) hc16) = AccMath.accVec (rowF fl tab (wL L).val (2 * t1.val) (2 * k.val + 1)) (offF fl (wL L).val (2 * t1.val) (2 * k.val + 1)) 3 38 :=
      acc_step d L fl tab (wL L).val (2 * t1.val) (2 * k.val + 1) 1 _ (hRB _) ⟨37, by decide⟩ ⟨3, by decide⟩ _ rfl _ hwB_37 _ (k1_off41_form ⟨2, by decide⟩ _ _) _ hc16
    have sB3_38 : addf (AccMath.accVec (rowF fl tab (wL L).val (2 * t1.val) (2 * k.val + 1)) (offF fl (wL L).val (2 * t1.val) (2 * k.val + 1)) 3 38) (shapeCast S16 (pair0_last.sl.v1913_5 d L tab t1 k r g1 g2 hR hin h5) hc16) = AccMath.accVec (rowF fl tab (wL L).val (2 * t1.val) (2 * k.val + 1)) (offF fl (wL L).val (2 * t1.val) (2 * k.val + 1)) 3 39 :=
      acc_step d L fl tab (wL L).val (2 * t1.val) (2 * k.val + 1) 1 _ (hRB _) ⟨38, by decide⟩ ⟨3, by decide⟩ _ rfl _ hwB_38 _ (k1_off42_form ⟨2, by decide⟩ _ _) _ hc16
    have sB3_39 : addf (AccMath.accVec (rowF fl tab (wL L).val (2 * t1.val) (2 * k.val + 1)) (offF fl (wL L).val (2 * t1.val) (2 * k.val + 1)) 3 39) (shapeCast S16 (pair0_last.sl.v1949_5 d L tab t1 k r g1 g2 hR hin h5) hc16) = AccMath.accVec (rowF fl tab (wL L).val (2 * t1.val) (2 * k.val + 1)) (offF fl (wL L).val (2 * t1.val) (2 * k.val + 1)) 3 40 :=
      acc_step d L fl tab (wL L).val (2 * t1.val) (2 * k.val + 1) 1 _ (hRB _) ⟨39, by decide⟩ ⟨3, by decide⟩ _ rfl _ hwB_39 _ (k1_off43_form ⟨2, by decide⟩ _ _) _ hc16
    have sB3_40 : addf (AccMath.accVec (rowF fl tab (wL L).val (2 * t1.val) (2 * k.val + 1)) (offF fl (wL L).val (2 * t1.val) (2 * k.val + 1)) 3 40) (shapeCast S16 (pair0_last.sl.v1985_5 d L tab t1 k r g1 g2 hR hin h5) hc16) = AccMath.accVec (rowF fl tab (wL L).val (2 * t1.val) (2 * k.val + 1)) (offF fl (wL L).val (2 * t1.val) (2 * k.val + 1)) 3 41 :=
      acc_step d L fl tab (wL L).val (2 * t1.val) (2 * k.val + 1) 1 _ (hRB _) ⟨40, by decide⟩ ⟨3, by decide⟩ _ rfl _ hwB_40 _ (k1_off44_form ⟨2, by decide⟩ _ _) _ hc16
    have sB3_41 : addf (AccMath.accVec (rowF fl tab (wL L).val (2 * t1.val) (2 * k.val + 1)) (offF fl (wL L).val (2 * t1.val) (2 * k.val + 1)) 3 41) (shapeCast S16 (pair0_last.sl.v2021_5 d L tab t1 k r g1 g2 hR hin h5) hc16) = AccMath.accVec (rowF fl tab (wL L).val (2 * t1.val) (2 * k.val + 1)) (offF fl (wL L).val (2 * t1.val) (2 * k.val + 1)) 3 42 :=
      acc_step d L fl tab (wL L).val (2 * t1.val) (2 * k.val + 1) 1 _ (hRB _) ⟨41, by decide⟩ ⟨3, by decide⟩ _ rfl _ hwB_41 _ (k1_off45_form ⟨2, by decide⟩ _ _) _ hc16
    have sB3_42 : addf (AccMath.accVec (rowF fl tab (wL L).val (2 * t1.val) (2 * k.val + 1)) (offF fl (wL L).val (2 * t1.val) (2 * k.val + 1)) 3 42) (shapeCast S16 (pair0_last.sl.v2057_5 d L tab t1 k r g1 g2 hR hin h5) hc16) = AccMath.accVec (rowF fl tab (wL L).val (2 * t1.val) (2 * k.val + 1)) (offF fl (wL L).val (2 * t1.val) (2 * k.val + 1)) 3 43 :=
      acc_step d L fl tab (wL L).val (2 * t1.val) (2 * k.val + 1) 1 _ (hRB _) ⟨42, by decide⟩ ⟨3, by decide⟩ _ rfl _ hwB_42 _ (k1_off46_form ⟨2, by decide⟩ _ _) _ hc16
    have sB3_43 : addf (AccMath.accVec (rowF fl tab (wL L).val (2 * t1.val) (2 * k.val + 1)) (offF fl (wL L).val (2 * t1.val) (2 * k.val + 1)) 3 43) (shapeCast S16 (pair0_last.sl.v2093_5 d L tab t1 k r g1 g2 hR hin h5) hc16) = AccMath.accVec (rowF fl tab (wL L).val (2 * t1.val) (2 * k.val + 1)) (offF fl (wL L).val (2 * t1.val) (2 * k.val + 1)) 3 44 :=
      acc_step d L fl tab (wL L).val (2 * t1.val) (2 * k.val + 1) 1 _ (hRB _) ⟨43, by decide⟩ ⟨3, by decide⟩ _ rfl _ hwB_43 _ (k1_off47_form ⟨2, by decide⟩ _ _) _ hc16
    have sB3_44 : addf (AccMath.accVec (rowF fl tab (wL L).val (2 * t1.val) (2 * k.val + 1)) (offF fl (wL L).val (2 * t1.val) (2 * k.val + 1)) 3 44) (shapeCast S16 (pair0_last.sl.v2129_5 d L tab t1 k r g1 g2 hR hin h5) hc16) = AccMath.accVec (rowF fl tab (wL L).val (2 * t1.val) (2 * k.val + 1)) (offF fl (wL L).val (2 * t1.val) (2 * k.val + 1)) 3 45 :=
      acc_step d L fl tab (wL L).val (2 * t1.val) (2 * k.val + 1) 1 _ (hRB _) ⟨44, by decide⟩ ⟨3, by decide⟩ _ rfl _ hwB_44 _ (k1_off48_form ⟨2, by decide⟩ _ _) _ hc16
    have sB3_45 : addf (AccMath.accVec (rowF fl tab (wL L).val (2 * t1.val) (2 * k.val + 1)) (offF fl (wL L).val (2 * t1.val) (2 * k.val + 1)) 3 45) (shapeCast S16 (pair0_last.sl.v2165_5 d L tab t1 k r g1 g2 hR hin h5) hc16) = AccMath.accVec (rowF fl tab (wL L).val (2 * t1.val) (2 * k.val + 1)) (offF fl (wL L).val (2 * t1.val) (2 * k.val + 1)) 3 46 :=
      acc_step d L fl tab (wL L).val (2 * t1.val) (2 * k.val + 1) 1 _ (hRB _) ⟨45, by decide⟩ ⟨3, by decide⟩ _ rfl _ hwB_45 _ (k1_off49_form ⟨2, by decide⟩ _ _) _ hc16
    have sB3_46 : addf (AccMath.accVec (rowF fl tab (wL L).val (2 * t1.val) (2 * k.val + 1)) (offF fl (wL L).val (2 * t1.val) (2 * k.val + 1)) 3 46) (shapeCast S16 (pair0_last.sl.v2201_5 d L tab t1 k r g1 g2 hR hin h5) hc16) = AccMath.accVec (rowF fl tab (wL L).val (2 * t1.val) (2 * k.val + 1)) (offF fl (wL L).val (2 * t1.val) (2 * k.val + 1)) 3 47 :=
      acc_step d L fl tab (wL L).val (2 * t1.val) (2 * k.val + 1) 1 _ (hRB _) ⟨46, by decide⟩ ⟨3, by decide⟩ _ rfl _ hwB_46 _ (k1_off50_form ⟨2, by decide⟩ _ _) _ hc16
    have sB3_47 : addf (AccMath.accVec (rowF fl tab (wL L).val (2 * t1.val) (2 * k.val + 1)) (offF fl (wL L).val (2 * t1.val) (2 * k.val + 1)) 3 47) (shapeCast S16 (pair0_last.sl.v2237_5 d L tab t1 k r g1 g2 hR hin h5) hc16) = AccMath.accVec (rowF fl tab (wL L).val (2 * t1.val) (2 * k.val + 1)) (offF fl (wL L).val (2 * t1.val) (2 * k.val + 1)) 3 48 :=
      acc_step d L fl tab (wL L).val (2 * t1.val) (2 * k.val + 1) 1 _ (hRB _) ⟨47, by decide⟩ ⟨3, by decide⟩ _ rfl _ hwB_47 _ (k1_off51_form ⟨2, by decide⟩ _ _) _ hc16
    have sB3_48 : addf (AccMath.accVec (rowF fl tab (wL L).val (2 * t1.val) (2 * k.val + 1)) (offF fl (wL L).val (2 * t1.val) (2 * k.val + 1)) 3 48) (shapeCast S16 (pair0_last.sl.v1602 d L tab t1 k r g1 g2 hR hin h5) hc16) = AccMath.accVec (rowF fl tab (wL L).val (2 * t1.val) (2 * k.val + 1)) (offF fl (wL L).val (2 * t1.val) (2 * k.val + 1)) 3 49 :=
      acc_step d L fl tab (wL L).val (2 * t1.val) (2 * k.val + 1) 1 _ (hRB _) ⟨48, by decide⟩ ⟨3, by decide⟩ _ rfl _ hwB_48 _ (k1_off53_form _ _) _ hc16
    have sB3_49 : addf (AccMath.accVec (rowF fl tab (wL L).val (2 * t1.val) (2 * k.val + 1)) (offF fl (wL L).val (2 * t1.val) (2 * k.val + 1)) 3 49) (shapeCast S16 (pair0_last.sl.v1636 d L tab t1 k r g1 g2 hR hin h5) hc16) = AccMath.accVec (rowF fl tab (wL L).val (2 * t1.val) (2 * k.val + 1)) (offF fl (wL L).val (2 * t1.val) (2 * k.val + 1)) 3 50 :=
      acc_step d L fl tab (wL L).val (2 * t1.val) (2 * k.val + 1) 1 _ (hRB _) ⟨49, by decide⟩ ⟨3, by decide⟩ _ rfl _ hwB_49 _ (k1_off54_form _ _) _ hc16
    have hPB3 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val) (2 * k.val + 1)) (offF fl (wL L).val (2 * t1.val) (2 * k.val + 1)) 3 0) (shapeCast S16 (pair0_last.sl.v1697_3 d L tab t1 k r g1 g2 hR hin h5) hc16)) (shapeCast S16 (pair0_last.sl.v1733_3 d L tab t1 k r g1 g2 hR hin h5) hc16)) (shapeCast S16 (pair0_last.sl.v1769_3 d L tab t1 k r g1 g2 hR hin h5) hc16)) (shapeCast S16 (pair0_last.sl.v1805_3 d L tab t1 k r g1 g2 hR hin h5) hc16)) (shapeCast S16 (pair0_last.sl.v1841_3 d L tab t1 k r g1 g2 hR hin h5) hc16)) (shapeCast S16 (pair0_last.sl.v1877_3 d L tab t1 k r g1 g2 hR hin h5) hc16)) (shapeCast S16 (pair0_last.sl.v1913_3 d L tab t1 k r g1 g2 hR hin h5) hc16)) (shapeCast S16 (pair0_last.sl.v1949_3 d L tab t1 k r g1 g2 hR hin h5) hc16)) (shapeCast S16 (pair0_last.sl.v1985_3 d L tab t1 k r g1 g2 hR hin h5) hc16)) (shapeCast S16 (pair0_last.sl.v2021_3 d L tab t1 k r g1 g2 hR hin h5) hc16)) (shapeCast S16 (pair0_last.sl.v2057_3 d L tab t1 k r g1 g2 hR hin h5) hc16)) (shapeCast S16 (pair0_last.sl.v2093_3 d L tab t1 k r g1 g2 hR hin h5) hc16)) (shapeCast S16 (pair0_last.sl.v2129_3 d L tab t1 k r g1 g2 hR hin h5) hc16)) (shapeCast S16 (pair0_last.sl.v2165_3 d L tab t1 k r g1 g2 hR hin h5) hc16)) (shapeCast S16 (pair0_last.sl.v2201_3 d L tab t1 k r g1 g2 hR hin h5) hc16)) (shapeCast S16 (pair0_last.sl.v2237_3 d L tab t1 k r g1 g2 hR hin h5) hc16)) (shapeCast S16 (pair0_last.sl.v1697_4 d L tab t1 k r g1 g2 hR hin h5) hc16)) (shapeCast S16 (pair0_last.sl.v1733_4 d L tab t1 k r g1 g2 hR hin h5) hc16)) (shapeCast S16 (pair0_last.sl.v1769_4 d L tab t1 k r g1 g2 hR hin h5) hc16)) (shapeCast S16 (pair0_last.sl.v1805_4 d L tab t1 k r g1 g2 hR hin h5) hc16)) (shapeCast S16 (pair0_last.sl.v1841_4 d L tab t1 k r g1 g2 hR hin h5) hc16)) (shapeCast S16 (pair0_last.sl.v1877_4 d L tab t1 k r g1 g2 hR hin h5) hc16)) (shapeCast S16 (pair0_last.sl.v1913_4 d L tab t1 k r g1 g2 hR hin h5) hc16)) (shapeCast S16 (pair0_last.sl.v1949_4 d L tab t1 k r g1 g2 hR hin h5) hc16)) (shapeCast S16 (pair0_last.sl.v1985_4 d L tab t1 k r g1 g2 hR hin h5) hc16)) (shapeCast S16 (pair0_last.sl.v2021_4 d L tab t1 k r g1 g2 hR hin h5) hc16)) (shapeCast S16 (pair0_last.sl.v2057_4 d L tab t1 k r g1 g2 hR hin h5) hc16)) (shapeCast S16 (pair0_last.sl.v2093_4 d L tab t1 k r g1 g2 hR hin h5) hc16)) (shapeCast S16 (pair0_last.sl.v2129_4 d L tab t1 k r g1 g2 hR hin h5) hc16)) (shapeCast S16 (pair0_last.sl.v2165_4 d L tab t1 k r g1 g2 hR hin h5) hc16)) (shapeCast S16 (pair0_last.sl.v2201_4 d L tab t1 k r g1 g2 hR hin h5) hc16)) (shapeCast S16 (pair0_last.sl.v2237_4 d L tab t1 k r g1 g2 hR hin h5) hc16)) (shapeCast S16 (pair0_last.sl.v1697_5 d L tab t1 k r g1 g2 hR hin h5) hc16)) (shapeCast S16 (pair0_last.sl.v1733_5 d L tab t1 k r g1 g2 hR hin h5) hc16)) (shapeCast S16 (pair0_last.sl.v1769_5 d L tab t1 k r g1 g2 hR hin h5) hc16)) (shapeCast S16 (pair0_last.sl.v1805_5 d L tab t1 k r g1 g2 hR hin h5) hc16)) (shapeCast S16 (pair0_last.sl.v1841_5 d L tab t1 k r g1 g2 hR hin h5) hc16)) (shapeCast S16 (pair0_last.sl.v1877_5 d L tab t1 k r g1 g2 hR hin h5) hc16)) (shapeCast S16 (pair0_last.sl.v1913_5 d L tab t1 k r g1 g2 hR hin h5) hc16)) (shapeCast S16 (pair0_last.sl.v1949_5 d L tab t1 k r g1 g2 hR hin h5) hc16)) (shapeCast S16 (pair0_last.sl.v1985_5 d L tab t1 k r g1 g2 hR hin h5) hc16)) (shapeCast S16 (pair0_last.sl.v2021_5 d L tab t1 k r g1 g2 hR hin h5) hc16)) (shapeCast S16 (pair0_last.sl.v2057_5 d L tab t1 k r g1 g2 hR hin h5) hc16)) (shapeCast S16 (pair0_last.sl.v2093_5 d L tab t1 k r g1 g2 hR hin h5) hc16)) (shapeCast S16 (pair0_last.sl.v2129_5 d L tab t1 k r g1 g2 hR hin h5) hc16)) (shapeCast S16 (pair0_last.sl.v2165_5 d L tab t1 k r g1 g2 hR hin h5) hc16)) (shapeCast S16 (pair0_last.sl.v2201_5 d L tab t1 k r g1 g2 hR hin h5) hc16)) (shapeCast S16 (pair0_last.sl.v2237_5 d L tab t1 k r g1 g2 hR hin h5) hc16)) (shapeCast S16 (pair0_last.sl.v1602 d L tab t1 k r g1 g2 hR hin h5) hc16)) (shapeCast S16 (pair0_last.sl.v1636 d L tab t1 k r g1 g2 hR hin h5) hc16)) hc1 x = Spec.bagPartial fl tab (128 * (wL L).val + 16 * (2 * t1.val) + (2 * k.val + 1)) (16 * 3 + (x 2).val) 50 := fun x => by
      rw [sB3_0, sB3_1, sB3_2, sB3_3, sB3_4, sB3_5, sB3_6, sB3_7, sB3_8, sB3_9, sB3_10, sB3_11, sB3_12, sB3_13, sB3_14, sB3_15, sB3_16, sB3_17, sB3_18, sB3_19, sB3_20, sB3_21, sB3_22, sB3_23, sB3_24, sB3_25, sB3_26, sB3_27, sB3_28, sB3_29, sB3_30, sB3_31, sB3_32, sB3_33, sB3_34, sB3_35, sB3_36, sB3_37, sB3_38, sB3_39, sB3_40, sB3_41, sB3_42, sB3_43, sB3_44, sB3_45, sB3_46, sB3_47, sB3_48, sB3_49]; exact payload_ok fl tab (wL L).val (2 * t1.val) (2 * k.val + 1) ⟨3, by decide⟩ hc1 x
    refine ⟨hT0, hV0, hT1, hV1, ?_, ?_⟩
    · exact RowsV_landing0 d L fl tab (by decide) (wL L).val (2 * t1.val) (2 * (k.val + 1)) g1 k1_off34 _ (fun j hb => ((words_of_TixV d L fl (wL L).val ((2 * t1.val) + 1) 1 0 (by decide) (by decide) g1 hT1 k1_off34 (by rw [k1_off34_eq]; rfl)) j hb).trans (by rw [show 2 * (k.val + 1) = 16 from by omega, blkWord_next])) _ _
    · have K0 := (WbV_iff_WbK d L fl tab (wL L).val (2 * t1.val) 0 (2 * k.val) wb).mp hWb
      have KA := WbK_bag d L fl tab (wL L).val (2 * t1.val) 0 _ wb K0 ⟨2 * k.val, by omega⟩ (k1_off28 k) (k1_off29 k) (k1_off30 k) (k1_off31 k)
        (k1_off28_eq k) (k1_off29_eq k) (k1_off30_eq k) (k1_off31_eq k) (k1_off28_inb k) (k1_off29_inb k) (k1_off30_inb k) (k1_off31_inb k) _ _ _ _ hPA0 hPA1 hPA2 hPA3
      have KB := WbK_bag d L fl tab (wL L).val (2 * t1.val) 0 _ _ KA ⟨2 * k.val + 1, by omega⟩ (k1_off55 k) (k1_off56 k) (k1_off57 k) (k1_off58 k)
        (k1_off55_eq k) (k1_off56_eq k) (k1_off57_eq k) (k1_off58_eq k) (k1_off55_inb k) (k1_off56_inb k) (k1_off57_inb k) (k1_off58_inb k) _ _ _ _ hPB0 hPB1 hPB2 hPB3
      intro g c hg
      refine KB g c ?_
      by_cases h1 : g.val < 2 * k.val
      · exact .inl (.inl h1)
      by_cases h2 : g.val = 2 * k.val
      · exact .inl (.inr (Fin.ext h2))
      · exact .inr (Fin.ext (by show g.val = 2 * k.val + 1; omega))

end Tile

end Cert.Proof.BagB
end
-- ==== Proof.TilePair0B.lean ====
/-
  One trip of an even block's pair loop on a vector subcore: from what holds before trip `k` to what holds before trip
  `k + 1`.

  The trip waits for the gather of bag `2 k` into slot 0, starts the gather of bag `2 k + 1` into slot 1, sums bag `2 k`'s fifty
  rows (three groups of sixteen and two more, each row read at its column offset in four sixteen-lane pieces) into the
  write-back scratch, waits for the second gather, starts the gather of bag `2 k + 2` into slot 0 — for the last trip, of the
  next block's first bag —, and sums bag `2 k + 1`. Each wait is admissible under what the subcore owes the launch; each
  gather's list lies in range by `TixB`; each extracted column offset passes the body's check by `RvB`.
-/
import proofs.«203835_g19404662243951_cont_8to1_399_35_alg».proof.Proof.TilePair0aB
import proofs.«203835_g19404662243951_cont_8to1_399_35_alg».proof.Proof.TilePair0cB
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

theorem pair0_region (fl : IVec Spec.SFlat 32) (qt : PosShare TreeShare) (tab : FVec F Spec.STab .f32) (O : CellTallies nD τ sig (HIx 1))
    (W0 : Waits sig (HIx 1)) (v2 v3 : BitVec 32) (t1 : Fin k1_t1_loop.trips) (v1385 : BitVec 32) (k : Fin k1_t2_loop.trips) :
    inv0 d L fl qt tab O W0 (2 * t1.val) k.val ⟨⟩
      ⊢ wp frame (wpE (defs₀ (F := F)) 𝒱₀ (thr d L) none) Set.univ
          (k1_t2_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10 v2 v3 0#32 1#32 t1 v1385 k ⟨⟩)
          (inv0 d L fl qt tab O W0 (2 * t1.val) (k.val + 1)) := by
  by_cases hk : k.val < 7
  · exact pair0_lt d L fl qt tab O W0 v2 v3 t1 v1385 k hk
  · exact pair0_last d L fl qt tab O W0 v2 v3 t1 v1385 k hk

end Tile

end Cert.Proof.BagB
end
-- ==== Proof.TileChk1B.lean ====
/-
  The printed checks of the SparseCore body, discharged by name: each check `k1_chkN` of an extracted column-offset word
  follows from the word being 0 or 64 (`TileChkB.chkN`).
-/
import proofs.«203835_g19404662243951_cont_8to1_399_35_alg».proof.Proof.TileChkB
import Idealize.ShloMosaic.Lib.Tactic

namespace Cert.Proof.BagB
open Lean Elab Tactic Meta in
/-- Reads the printed check at the head of the goal off its name and applies that check's lemma, leaving the word's fact. -/
elab "chk_disch1" : tactic => withMainContext do
  let g ← getMainGoal
  let t ← instantiateMVars (← g.getType)
  let .const n _ := t.getAppFn | throwError "chk_disch1: not a check"
  let .str _ last := n | throwError "chk_disch1: not a check"
  unless last.startsWith "k1_chk" do throwError "chk_disch1: not a check"
  let idx := last.drop 6
  let lem : Name := (`Cert.Proof.TileChkB.chk1).getPrefix ++ Name.mkSimple ("chk" ++ idx)
  evalTactic (← `(tactic| first | (refine $(mkIdent lem) ?_) | (refine $(mkIdent lem) _ ?_)))

end Cert.Proof.BagB
-- ==== Proof.TilePair1aB.lean ====
/-
  One trip of an odd block's pair loop on a vector subcore, a trip before the last (`k < 7`): from what holds before trip `k`
  to what holds before trip `k + 1`.

  The trip waits for the gather of bag `2 k` into slot 0, starts the gather of bag `2 k + 1` into slot 1 (its list in the second
  half of the row-number scratch), sums bag `2 k`'s fifty rows into row `2 k` of slot 1 of the write-back scratch, waits for the
  second gather, starts the gather of bag `2 k + 2` into slot 0, and sums bag `2 k + 1` into row `2 k + 1`. Each accumulator,
  fifty rows on, is the bag's partial sum of fifty terms at its sixteen columns: row by row, a sixteen-lane load of the
  gathered row at its column offset adds the row's term.
-/
import proofs.«203835_g19404662243951_cont_8to1_399_35_alg».proof.Proof.TilePreB
import proofs.«203835_g19404662243951_cont_8to1_399_35_alg».proof.Proof.PayB
import proofs.«203835_g19404662243951_cont_8to1_399_35_alg».proof.Proof.TileChkB
import proofs.«203835_g19404662243951_cont_8to1_399_35_alg».proof.Proof.TileMath
import proofs.«203835_g19404662243951_cont_8to1_399_35_alg».proof.Proof.TileInvB
import proofs.«203835_g19404662243951_cont_8to1_399_35_alg».proof.Proof.TileInv1B
import proofs.«203835_g19404662243951_cont_8to1_399_35_alg».proof.Proof.Gen.Kernel.Skeleton
import proofs.«203835_g19404662243951_cont_8to1_399_35_alg».proof.Proof.TilePairValB
import proofs.«203835_g19404662243951_cont_8to1_399_35_alg».proof.Proof.TileChk1B
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

set_option maxHeartbeats 0 in
theorem pair1_lt (fl : IVec Spec.SFlat 32) (qt : PosShare TreeShare) (tab : FVec F Spec.STab .f32) (O : CellTallies nD τ sig (HIx 1))
    (W0 : Waits sig (HIx 1)) (t1 : Fin k1_t1_loop.trips) (v1407 : BitVec 32) (k : Fin k1_t5_loop.trips) (hk : k.val < 7) :
    invF d L fl qt tab O W0 (2 * t1.val + 1) k.val ⟨⟩
      ⊢ wp frame (wpE (defs₀ (F := F)) 𝒱₀ (thr d L) none) Set.univ
          (k1_t5_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10 t1 v1407 k ⟨⟩)
          (invF d L fl qt tab O W0 (2 * t1.val + 1) (k.val + 1)) := by
  unfold k1_t5_body
  unfold invF
  iintro ⟨#Hmw', %r, %g1, %g2, %wb, %o, %ho, ⟨%hT, %hR, %ho_eq, %hV⟩, Hg0, H1, Ht, H3, H2, H4, Hg1, %W', %hW', HO⟩
  have hin := hin_of d L g1 hT
  have h9 := cond9_lt k hk
  have h10 := cond10_lt t1 k hk
  sl_exec_parts (disch := first | decide | (chk_disch1; exact hR _))
  sl_unroll
  sl_exec_parts (disch := first | decide | (chk_disch1; exact hR _))
  sl_unroll
  sl_exec_parts (disch := first | decide | (chk_disch1; exact hR _))
  sl_step
  have harith : 128 * k.val + 1152 = 1024 + 128 * (k.val + 1) := by omega
  have hoff : k1_off90 k = lo1 (k.val + 1) := by rw [k1_off90_eq]; unfold lo1; rw [if_pos (by omega), harith]
  isplitl []; · iexact Hmw'
  iexists _; iexists g1; iexists g2; iexists _; iexists (k1_off90 k); iexists (k1_off90_inb k h9)
  isplitr; rotate_left
  · isplitl [Hg0]; · iexact Hg0
    isplitl [H1]; · iexact H1
    isplitl [Ht]; · iexact Ht
    isplitl [H3]; · iexact H3
    isplitl [H2]; · iexact H2
    isplitl [H4]; · iexact H4
    isplitl [Hg1]; · iexact Hg1
    iexists (insert (SemLoc.dma cc1_scratch6.sem, (default : HIx 1)) (insert (SemLoc.dma cc1_scratch5.sem, (default : HIx 1)) W')); isplitr
    · ipureintro; intro p hp
      rcases Finset.mem_insert.mp hp with rfl | hp
      · exact .inr rfl
      rcases Finset.mem_insert.mp hp with rfl | hp
      · exact .inr rfl
      · exact hW' p hp
    · iexact HO
  · ipureintro
    refine ⟨hT, hR, hoff, ?_⟩
    obtain ⟨hT1, hR1, hnext, hrows, hwb⟩ := hV
    refine ⟨hT1, hR1, hnext, fun _ => ?_, ?_⟩
    · have hw := words_of_TixV d L fl (wL L).val (2 * t1.val + 1) 1 (2 * k.val + 2) (by omega) (by omega) g1 hT1 (k1_off90 k)
        (by rw [k1_off90_eq]; show 128 * k.val + 1152 = 1024 * 1 + 64 * (2 * k.val + 2); omega)
      have e : 2 * (k.val + 1) = 2 * k.val + 2 := by omega
      rw [e]
      exact RowsV_landing0 d L fl tab (by decide) (wL L).val (2 * t1.val + 1) (2 * k.val + 2) g1 (k1_off90 k) (k1_off90_inb k h9) hw
        (hin _ _) _
    · skip
      have h8 : k.val < 8 := lt_of_lt_of_eq k.isLt trips5
      have hc16 : S1x1x16.ShapeCasts S16 := by decide
      have hc1 : S16.ShapeCasts S1x1x16 := by decide
      have hRA : RowsV d L fl tab (wL L).val (2 * t1.val + 1) (2 * k.val) 0 (View.write (Elt F) (h1M).view r (pair1_lt.sl.gather0 d L tab k g1 hin) Finset.univ) :=
        RowsV_keep0 d L fl tab (wL L).val (2 * t1.val + 1) (2 * k.val) r _ (hrows (Or.inl h8))
      have hwB := words_of_TixV d L fl (wL L).val (2 * t1.val + 1) 1 (2 * k.val + 1) (by decide) (by omega) g1 hT1 (k1_off64 k)
        (by rw [k1_off64_eq]; show 128 * k.val + 1088 = 1024 * 1 + 64 * (2 * k.val + 1); omega)
      have hRB1 : RowsV d L fl tab (wL L).val (2 * t1.val + 1) (2 * k.val + 1) 1 (View.write (Elt F) (h1M).view r (pair1_lt.sl.gather0 d L tab k g1 hin) Finset.univ) :=
        RowsV_landing1 d L fl tab (by decide) (wL L).val (2 * t1.val + 1) (2 * k.val + 1) g1 (k1_off64 k) (k1_off64_inb k) hwB (hin _ _) r
      have hRB : RowsV d L fl tab (wL L).val (2 * t1.val + 1) (2 * k.val + 1) 1 (View.write (Elt F) (h0M).view (View.write (Elt F) (h1M).view r (pair1_lt.sl.gather0 d L tab k g1 hin) Finset.univ) (pair1_lt.sl.gather212 d L tab k g1 hin h9) Finset.univ) :=
        RowsV_keep1 d L fl tab (wL L).val (2 * t1.val + 1) (2 * k.val + 1) _ _ hRB1
      have hw_v1667 : pair1_lt.sl.v1667 d L k g2 = Spec.tcol (blkWord fl (wL L).val (2 * t1.val + 1) (64 * (2 * k.val) + 0)) := by
        refine (rv_extract d L g2 (k1_off65 k ⟨0, by decide⟩) (k1_off65_inb k ⟨0, by decide⟩) (by decide) 0 (by decide) (by decide) (by decide)).trans ?_
        exact rv_word d L fl (wL L).val (2 * t1.val + 1) 1 (2 * k.val) 0 (by decide) (by omega) (by decide) g2 hR1 _
          (by rw [k1_off65_eq]; show 128 * k.val + 16 * 0 + 1024 + 0 = 1024 * 1 + 64 * (2 * k.val) + 0; omega) _
      have hw_v1703 : pair1_lt.sl.v1703 d L k g2 = Spec.tcol (blkWord fl (wL L).val (2 * t1.val + 1) (64 * (2 * k.val) + 1)) := by
        refine (rv_extract d L g2 (k1_off65 k ⟨0, by decide⟩) (k1_off65_inb k ⟨0, by decide⟩) (by decide) 1 (by decide) (by decide) (by decide)).trans ?_
        exact rv_word d L fl (wL L).val (2 * t1.val + 1) 1 (2 * k.val) 1 (by decide) (by omega) (by decide) g2 hR1 _
          (by rw [k1_off65_eq]; show 128 * k.val + 16 * 0 + 1024 + 1 = 1024 * 1 + 64 * (2 * k.val) + 1; omega) _
      have hw_v1739 : pair1_lt.sl.v1739 d L k g2 = Spec.tcol (blkWord fl (wL L).val (2 * t1.val + 1) (64 * (2 * k.val) + 2)) := by
        refine (rv_extract d L g2 (k1_off65 k ⟨0, by decide⟩) (k1_off65_inb k ⟨0, by decide⟩) (by decide) 2 (by decide) (by decide) (by decide)).trans ?_
        exact rv_word d L fl (wL L).val (2 * t1.val + 1) 1 (2 * k.val) 2 (by decide) (by omega) (by decide) g2 hR1 _
          (by rw [k1_off65_eq]; show 128 * k.val + 16 * 0 + 1024 + 2 = 1024 * 1 + 64 * (2 * k.val) + 2; omega) _
      have hw_v1775 : pair1_lt.sl.v1775 d L k g2 = Spec.tcol (blkWord fl (wL L).val (2 * t1.val + 1) (64 * (2 * k.val) + 3)) := by
        refine (rv_extract d L g2 (k1_off65 k ⟨0, by decide⟩) (k1_off65_inb k ⟨0, by decide⟩) (by decide) 3 (by decide) (by decide) (by decide)).trans ?_
        exact rv_word d L fl (wL L).val (2 * t1.val + 1) 1 (2 * k.val) 3 (by decide) (by omega) (by decide) g2 hR1 _
          (by rw [k1_off65_eq]; show 128 * k.val + 16 * 0 + 1024 + 3 = 1024 * 1 + 64 * (2 * k.val) + 3; omega) _
      have hw_v1811 : pair1_lt.sl.v1811 d L k g2 = Spec.tcol (blkWord fl (wL L).val (2 * t1.val + 1) (64 * (2 * k.val) + 4)) := by
        refine (rv_extract d L g2 (k1_off65 k ⟨0, by decide⟩) (k1_off65_inb k ⟨0, by decide⟩) (by decide) 4 (by decide) (by decide) (by decide)).trans ?_
        exact rv_word d L fl (wL L).val (2 * t1.val + 1) 1 (2 * k.val) 4 (by decide) (by omega) (by decide) g2 hR1 _
          (by rw [k1_off65_eq]; show 128 * k.val + 16 * 0 + 1024 + 4 = 1024 * 1 + 64 * (2 * k.val) + 4; omega) _
      have hw_v1847 : pair1_lt.sl.v1847 d L k g2 = Spec.tcol (blkWord fl (wL L).val (2 * t1.val + 1) (64 * (2 * k.val) + 5)) := by
        refine (rv_extract d L g2 (k1_off65 k ⟨0, by decide⟩) (k1_off65_inb k ⟨0, by decide⟩) (by decide) 5 (by decide) (by decide) (by decide)).trans ?_
        exact rv_word d L fl (wL L).val (2 * t1.val + 1) 1 (2 * k.val) 5 (by decide) (by omega) (by decide) g2 hR1 _
          (by rw [k1_off65_eq]; show 128 * k.val + 16 * 0 + 1024 + 5 = 1024 * 1 + 64 * (2 * k.val) + 5; omega) _
      have hw_v1883 : pair1_lt.sl.v1883 d L k g2 = Spec.tcol (blkWord fl (wL L).val (2 * t1.val + 1) (64 * (2 * k.val) + 6)) := by
        refine (rv_extract d L g2 (k1_off65 k ⟨0, by decide⟩) (k1_off65_inb k ⟨0, by decide⟩) (by decide) 6 (by decide) (by decide) (by decide)).trans ?_
        exact rv_word d L fl (wL L).val (2 * t1.val + 1) 1 (2 * k.val) 6 (by decide) (by omega) (by decide) g2 hR1 _
          (by rw [k1_off65_eq]; show 128 * k.val + 16 * 0 + 1024 + 6 = 1024 * 1 + 64 * (2 * k.val) + 6; omega) _
      have hw_v1919 : pair1_lt.sl.v1919 d L k g2 = Spec.tcol (blkWord fl (wL L).val (2 * t1.val + 1) (64 * (2 * k.val) + 7)) := by
        refine (rv_extract d L g2 (k1_off65 k ⟨0, by decide⟩) (k1_off65_inb k ⟨0, by decide⟩) (by decide) 7 (by decide) (by decide) (by decide)).trans ?_
        exact rv_word d L fl (wL L).val (2 * t1.val + 1) 1 (2 * k.val) 7 (by decide) (by omega) (by decide) g2 hR1 _
          (by rw [k1_off65_eq]; show 128 * k.val + 16 * 0 + 1024 + 7 = 1024 * 1 + 64 * (2 * k.val) + 7; omega) _
      have hw_v1955 : pair1_lt.sl.v1955 d L k g2 = Spec.tcol (blkWord fl (wL L).val (2 * t1.val + 1) (64 * (2 * k.val) + 8)) := by
        refine (rv_extract d L g2 (k1_off65 k ⟨0, by decide⟩) (k1_off65_inb k ⟨0, by decide⟩) (by decide) 8 (by decide) (by decide) (by decide)).trans ?_
        exact rv_word d L fl (wL L).val (2 * t1.val + 1) 1 (2 * k.val) 8 (by decide) (by omega) (by decide) g2 hR1 _
          (by rw [k1_off65_eq]; show 128 * k.val + 16 * 0 + 1024 + 8 = 1024 * 1 + 64 * (2 * k.val) + 8; omega) _
      have hw_v1991 : pair1_lt.sl.v1991 d L k g2 = Spec.tcol (blkWord fl (wL L).val (2 * t1.val + 1) (64 * (2 * k.val) + 9)) := by
        refine (rv_extract d L g2 (k1_off65 k ⟨0, by decide⟩) (k1_off65_inb k ⟨0, by decide⟩) (by decide) 9 (by decide) (by decide) (by decide)).trans ?_
        exact rv_word d L fl (wL L).val (2 * t1.val + 1) 1 (2 * k.val) 9 (by decide) (by omega) (by decide) g2 hR1 _
          (by rw [k1_off65_eq]; show 128 * k.val + 16 * 0 + 1024 + 9 = 1024 * 1 + 64 * (2 * k.val) + 9; omega) _
      have hw_v2027 : pair1_lt.sl.v2027 d L k g2 = Spec.tcol (blkWord fl (wL L).val (2 * t1.val + 1) (64 * (2 * k.val) + 10)) := by
        refine (rv_extract d L g2 (k1_off65 k ⟨0, by decide⟩) (k1_off65_inb k ⟨0, by decide⟩) (by decide) 10 (by decide) (by decide) (by decide)).trans ?_
        exact rv_word d L fl (wL L).val (2 * t1.val + 1) 1 (2 * k.val) 10 (by decide) (by omega) (by decide) g2 hR1 _
          (by rw [k1_off65_eq]; show 128 * k.val + 16 * 0 + 1024 + 10 = 1024 * 1 + 64 * (2 * k.val) + 10; omega) _
      have hw_v2063 : pair1_lt.sl.v2063 d L k g2 = Spec.tcol (blkWord fl (wL L).val (2 * t1.val + 1) (64 * (2 * k.val) + 11)) := by
        refine (rv_extract d L g2 (k1_off65 k ⟨0, by decide⟩) (k1_off65_inb k ⟨0, by decide⟩) (by decide) 11 (by decide) (by decide) (by decide)).trans ?_
        exact rv_word d L fl (wL L).val (2 * t1.val + 1) 1 (2 * k.val) 11 (by decide) (by omega) (by decide) g2 hR1 _
          (by rw [k1_off65_eq]; show 128 * k.val + 16 * 0 + 1024 + 11 = 1024 * 1 + 64 * (2 * k.val) + 11; omega) _
      have hw_v2099 : pair1_lt.sl.v2099 d L k g2 = Spec.tcol (blkWord fl (wL L).val (2 * t1.val + 1) (64 * (2 * k.val) + 12)) := by
        refine (rv_extract d L g2 (k1_off65 k ⟨0, by decide⟩) (k1_off65_inb k ⟨0, by decide⟩) (by decide) 12 (by decide) (by decide) (by decide)).trans ?_
        exact rv_word d L fl (wL L).val (2 * t1.val + 1) 1 (2 * k.val) 12 (by decide) (by omega) (by decide) g2 hR1 _
          (by rw [k1_off65_eq]; show 128 * k.val + 16 * 0 + 1024 + 12 = 1024 * 1 + 64 * (2 * k.val) + 12; omega) _
      have hw_v2135 : pair1_lt.sl.v2135 d L k g2 = Spec.tcol (blkWord fl (wL L).val (2 * t1.val + 1) (64 * (2 * k.val) + 13)) := by
        refine (rv_extract d L g2 (k1_off65 k ⟨0, by decide⟩) (k1_off65_inb k ⟨0, by decide⟩) (by decide) 13 (by decide) (by decide) (by decide)).trans ?_
        exact rv_word d L fl (wL L).val (2 * t1.val + 1) 1 (2 * k.val) 13 (by decide) (by omega) (by decide) g2 hR1 _
          (by rw [k1_off65_eq]; show 128 * k.val + 16 * 0 + 1024 + 13 = 1024 * 1 + 64 * (2 * k.val) + 13; omega) _
      have hw_v2171 : pair1_lt.sl.v2171 d L k g2 = Spec.tcol (blkWord fl (wL L).val (2 * t1.val + 1) (64 * (2 * k.val) + 14)) := by
        refine (rv_extract d L g2 (k1_off65 k ⟨0, by decide⟩) (k1_off65_inb k ⟨0, by decide⟩) (by decide) 14 (by decide) (by decide) (by decide)).trans ?_
        exact rv_word d L fl (wL L).val (2 * t1.val + 1) 1 (2 * k.val) 14 (by decide) (by omega) (by decide) g2 hR1 _
          (by rw [k1_off65_eq]; show 128 * k.val + 16 * 0 + 1024 + 14 = 1024 * 1 + 64 * (2 * k.val) + 14; omega) _
      have hw_v2207 : pair1_lt.sl.v2207 d L k g2 = Spec.tcol (blkWord fl (wL L).val (2 * t1.val + 1) (64 * (2 * k.val) + 15)) := by
        refine (rv_extract d L g2 (k1_off65 k ⟨0, by decide⟩) (k1_off65_inb k ⟨0, by decide⟩) (by decide) 15 (by decide) (by decide) (by decide)).trans ?_
        exact rv_word d L fl (wL L).val (2 * t1.val + 1) 1 (2 * k.val) 15 (by decide) (by omega) (by decide) g2 hR1 _
          (by rw [k1_off65_eq]; show 128 * k.val + 16 * 0 + 1024 + 15 = 1024 * 1 + 64 * (2 * k.val) + 15; omega) _
      have hw_v1667_1 : pair1_lt.sl.v1667_1 d L k g2 = Spec.tcol (blkWord fl (wL L).val (2 * t1.val + 1) (64 * (2 * k.val) + 16)) := by
        refine (rv_extract d L g2 (k1_off65 k ⟨1, by decide⟩) (k1_off65_inb k ⟨1, by decide⟩) (by decide) 0 (by decide) (by decide) (by decide)).trans ?_
        exact rv_word d L fl (wL L).val (2 * t1.val + 1) 1 (2 * k.val) 16 (by decide) (by omega) (by decide) g2 hR1 _
          (by rw [k1_off65_eq]; show 128 * k.val + 16 * 1 + 1024 + 0 = 1024 * 1 + 64 * (2 * k.val) + 16; omega) _
      have hw_v1703_1 : pair1_lt.sl.v1703_1 d L k g2 = Spec.tcol (blkWord fl (wL L).val (2 * t1.val + 1) (64 * (2 * k.val) + 17)) := by
        refine (rv_extract d L g2 (k1_off65 k ⟨1, by decide⟩) (k1_off65_inb k ⟨1, by decide⟩) (by decide) 1 (by decide) (by decide) (by decide)).trans ?_
        exact rv_word d L fl (wL L).val (2 * t1.val + 1) 1 (2 * k.val) 17 (by decide) (by omega) (by decide) g2 hR1 _
          (by rw [k1_off65_eq]; show 128 * k.val + 16 * 1 + 1024 + 1 = 1024 * 1 + 64 * (2 * k.val) + 17; omega) _
      have hw_v1739_1 : pair1_lt.sl.v1739_1 d L k g2 = Spec.tcol (blkWord fl (wL L).val (2 * t1.val + 1) (64 * (2 * k.val) + 18)) := by
        refine (rv_extract d L g2 (k1_off65 k ⟨1, by decide⟩) (k1_off65_inb k ⟨1, by decide⟩) (by decide) 2 (by decide) (by decide) (by decide)).trans ?_
        exact rv_word d L fl (wL L).val (2 * t1.val + 1) 1 (2 * k.val) 18 (by decide) (by omega) (by decide) g2 hR1 _
          (by rw [k1_off65_eq]; show 128 * k.val + 16 * 1 + 1024 + 2 = 1024 * 1 + 64 * (2 * k.val) + 18; omega) _
      have hw_v1775_1 : pair1_lt.sl.v1775_1 d L k g2 = Spec.tcol (blkWord fl (wL L).val (2 * t1.val + 1) (64 * (2 * k.val) + 19)) := by
        refine (rv_extract d L g2 (k1_off65 k ⟨1, by decide⟩) (k1_off65_inb k ⟨1, by decide⟩) (by decide) 3 (by decide) (by decide) (by decide)).trans ?_
        exact rv_word d L fl (wL L).val (2 * t1.val + 1) 1 (2 * k.val) 19 (by decide) (by omega) (by decide) g2 hR1 _
          (by rw [k1_off65_eq]; show 128 * k.val + 16 * 1 + 1024 + 3 = 1024 * 1 + 64 * (2 * k.val) + 19; omega) _
      have hw_v1811_1 : pair1_lt.sl.v1811_1 d L k g2 = Spec.tcol (blkWord fl (wL L).val (2 * t1.val + 1) (64 * (2 * k.val) + 20)) := by
        refine (rv_extract d L g2 (k1_off65 k ⟨1, by decide⟩) (k1_off65_inb k ⟨1, by decide⟩) (by decide) 4 (by decide) (by decide) (by decide)).trans ?_
        exact rv_word d L fl (wL L).val (2 * t1.val + 1) 1 (2 * k.val) 20 (by decide) (by omega) (by decide) g2 hR1 _
          (by rw [k1_off65_eq]; show 128 * k.val + 16 * 1 + 1024 + 4 = 1024 * 1 + 64 * (2 * k.val) + 20; omega) _
      have hw_v1847_1 : pair1_lt.sl.v1847_1 d L k g2 = Spec.tcol (blkWord fl (wL L).val (2 * t1.val + 1) (64 * (2 * k.val) + 21)) := by
        refine (rv_extract d L g2 (k1_off65 k ⟨1, by decide⟩) (k1_off65_inb k ⟨1, by decide⟩) (by decide) 5 (by decide) (by decide) (by decide)).trans ?_
        exact rv_word d L fl (wL L).val (2 * t1.val + 1) 1 (2 * k.val) 21 (by decide) (by omega) (by decide) g2 hR1 _
          (by rw [k1_off65_eq]; show 128 * k.val + 16 * 1 + 1024 + 5 = 1024 * 1 + 64 * (2 * k.val) + 21; omega) _
      have hw_v1883_1 : pair1_lt.sl.v1883_1 d L k g2 = Spec.tcol (blkWord fl (wL L).val (2 * t1.val + 1) (64 * (2 * k.val) + 22)) := by
        refine (rv_extract d L g2 (k1_off65 k ⟨1, by decide⟩) (k1_off65_inb k ⟨1, by decide⟩) (by decide) 6 (by decide) (by decide) (by decide)).trans ?_
        exact rv_word d L fl (wL L).val (2 * t1.val + 1) 1 (2 * k.val) 22 (by decide) (by omega) (by decide) g2 hR1 _
          (by rw [k1_off65_eq]; show 128 * k.val + 16 * 1 + 1024 + 6 = 1024 * 1 + 64 * (2 * k.val) + 22; omega) _
      have hw_v1919_1 : pair1_lt.sl.v1919_1 d L k g2 = Spec.tcol (blkWord fl (wL L).val (2 * t1.val + 1) (64 * (2 * k.val) + 23)) := by
        refine (rv_extract d L g2 (k1_off65 k ⟨1, by decide⟩) (k1_off65_inb k ⟨1, by decide⟩) (by decide) 7 (by decide) (by decide) (by decide)).trans ?_
        exact rv_word d L fl (wL L).val (2 * t1.val + 1) 1 (2 * k.val) 23 (by decide) (by omega) (by decide) g2 hR1 _
          (by rw [k1_off65_eq]; show 128 * k.val + 16 * 1 + 1024 + 7 = 1024 * 1 + 64 * (2 * k.val) + 23; omega) _
      have hw_v1955_1 : pair1_lt.sl.v1955_1 d L k g2 = Spec.tcol (blkWord fl (wL L).val (2 * t1.val + 1) (64 * (2 * k.val) + 24)) := by
        refine (rv_extract d L g2 (k1_off65 k ⟨1, by decide⟩) (k1_off65_inb k ⟨1, by decide⟩) (by decide) 8 (by decide) (by decide) (by decide)).trans ?_
        exact rv_word d L fl (wL L).val (2 * t1.val + 1) 1 (2 * k.val) 24 (by decide) (by omega) (by decide) g2 hR1 _
          (by rw [k1_off65_eq]; show 128 * k.val + 16 * 1 + 1024 + 8 = 1024 * 1 + 64 * (2 * k.val) + 24; omega) _
      have hw_v1991_1 : pair1_lt.sl.v1991_1 d L k g2 = Spec.tcol (blkWord fl (wL L).val (2 * t1.val + 1) (64 * (2 * k.val) + 25)) := by
        refine (rv_extract d L g2 (k1_off65 k ⟨1, by decide⟩) (k1_off65_inb k ⟨1, by decide⟩) (by decide) 9 (by decide) (by decide) (by decide)).trans ?_
        exact rv_word d L fl (wL L).val (2 * t1.val + 1) 1 (2 * k.val) 25 (by decide) (by omega) (by decide) g2 hR1 _
          (by rw [k1_off65_eq]; show 128 * k.val + 16 * 1 + 1024 + 9 = 1024 * 1 + 64 * (2 * k.val) + 25; omega) _
      have hw_v2027_1 : pair1_lt.sl.v2027_1 d L k g2 = Spec.tcol (blkWord fl (wL L).val (2 * t1.val + 1) (64 * (2 * k.val) + 26)) := by
        refine (rv_extract d L g2 (k1_off65 k ⟨1, by decide⟩) (k1_off65_inb k ⟨1, by decide⟩) (by decide) 10 (by decide) (by decide) (by decide)).trans ?_
        exact rv_word d L fl (wL L).val (2 * t1.val + 1) 1 (2 * k.val) 26 (by decide) (by omega) (by decide) g2 hR1 _
          (by rw [k1_off65_eq]; show 128 * k.val + 16 * 1 + 1024 + 10 = 1024 * 1 + 64 * (2 * k.val) + 26; omega) _
      have hw_v2063_1 : pair1_lt.sl.v2063_1 d L k g2 = Spec.tcol (blkWord fl (wL L).val (2 * t1.val + 1) (64 * (2 * k.val) + 27)) := by
        refine (rv_extract d L g2 (k1_off65 k ⟨1, by decide⟩) (k1_off65_inb k ⟨1, by decide⟩) (by decide) 11 (by decide) (by decide) (by decide)).trans ?_
        exact rv_word d L fl (wL L).val (2 * t1.val + 1) 1 (2 * k.val) 27 (by decide) (by omega) (by decide) g2 hR1 _
          (by rw [k1_off65_eq]; show 128 * k.val + 16 * 1 + 1024 + 11 = 1024 * 1 + 64 * (2 * k.val) + 27; omega) _
      have hw_v2099_1 : pair1_lt.sl.v2099_1 d L k g2 = Spec.tcol (blkWord fl (wL L).val (2 * t1.val + 1) (64 * (2 * k.val) + 28)) := by
        refine (rv_extract d L g2 (k1_off65 k ⟨1, by decide⟩) (k1_off65_inb k ⟨1, by decide⟩) (by decide) 12 (by decide) (by decide) (by decide)).trans ?_
        exact rv_word d L fl (wL L).val (2 * t1.val + 1) 1 (2 * k.val) 28 (by decide) (by omega) (by decide) g2 hR1 _
          (by rw [k1_off65_eq]; show 128 * k.val + 16 * 1 + 1024 + 12 = 1024 * 1 + 64 * (2 * k.val) + 28; omega) _
      have hw_v2135_1 : pair1_lt.sl.v2135_1 d L k g2 = Spec.tcol (blkWord fl (wL L).val (2 * t1.val + 1) (64 * (2 * k.val) + 29)) := by
        refine (rv_extract d L g2 (k1_off65 k ⟨1, by decide⟩) (k1_off65_inb k ⟨1, by decide⟩) (by decide) 13 (by decide) (by decide) (by decide)).trans ?_
        exact rv_word d L fl (wL L).val (2 * t1.val + 1) 1 (2 * k.val) 29 (by decide) (by omega) (by decide) g2 hR1 _
          (by rw [k1_off65_eq]; show 128 * k.val + 16 * 1 + 1024 + 13 = 1024 * 1 + 64 * (2 * k.val) + 29; omega) _
      have hw_v2171_1 : pair1_lt.sl.v2171_1 d L k g2 = Spec.tcol (blkWord fl (wL L).val (2 * t1.val + 1) (64 * (2 * k.val) + 30)) := by
        refine (rv_extract d L g2 (k1_off65 k ⟨1, by decide⟩) (k1_off65_inb k ⟨1, by decide⟩) (by decide) 14 (by decide) (by decide) (by decide)).trans ?_
        exact rv_word d L fl (wL L).val (2 * t1.val + 1) 1 (2 * k.val) 30 (by decide) (by omega) (by decide) g2 hR1 _
          (by rw [k1_off65_eq]; show 128 * k.val + 16 * 1 + 1024 + 14 = 1024 * 1 + 64 * (2 * k.val) + 30; omega) _
      have hw_v2207_1 : pair1_lt.sl.v2207_1 d L k g2 = Spec.tcol (blkWord fl (wL L).val (2 * t1.val + 1) (64 * (2 * k.val) + 31)) := by
        refine (rv_extract d L g2 (k1_off65 k ⟨1, by decide⟩) (k1_off65_inb k ⟨1, by decide⟩) (by decide) 15 (by decide) (by decide) (by decide)).trans ?_
        exact rv_word d L fl (wL L).val (2 * t1.val + 1) 1 (2 * k.val) 31 (by decide) (by omega) (by decide) g2 hR1 _
          (by rw [k1_off65_eq]; show 128 * k.val + 16 * 1 + 1024 + 15 = 1024 * 1 + 64 * (2 * k.val) + 31; omega) _
      have hw_v1667_2 : pair1_lt.sl.v1667_2 d L k g2 = Spec.tcol (blkWord fl (wL L).val (2 * t1.val + 1) (64 * (2 * k.val) + 32)) := by
        refine (rv_extract d L g2 (k1_off65 k ⟨2, by decide⟩) (k1_off65_inb k ⟨2, by decide⟩) (by decide) 0 (by decide) (by decide) (by decide)).trans ?_
        exact rv_word d L fl (wL L).val (2 * t1.val + 1) 1 (2 * k.val) 32 (by decide) (by omega) (by decide) g2 hR1 _
          (by rw [k1_off65_eq]; show 128 * k.val + 16 * 2 + 1024 + 0 = 1024 * 1 + 64 * (2 * k.val) + 32; omega) _
      have hw_v1703_2 : pair1_lt.sl.v1703_2 d L k g2 = Spec.tcol (blkWord fl (wL L).val (2 * t1.val + 1) (64 * (2 * k.val) + 33)) := by
        refine (rv_extract d L g2 (k1_off65 k ⟨2, by decide⟩) (k1_off65_inb k ⟨2, by decide⟩) (by decide) 1 (by decide) (by decide) (by decide)).trans ?_
        exact rv_word d L fl (wL L).val (2 * t1.val + 1) 1 (2 * k.val) 33 (by decide) (by omega) (by decide) g2 hR1 _
          (by rw [k1_off65_eq]; show 128 * k.val + 16 * 2 + 1024 + 1 = 1024 * 1 + 64 * (2 * k.val) + 33; omega) _
      have hw_v1739_2 : pair1_lt.sl.v1739_2 d L k g2 = Spec.tcol (blkWord fl (wL L).val (2 * t1.val + 1) (64 * (2 * k.val) + 34)) := by
        refine (rv_extract d L g2 (k1_off65 k ⟨2, by decide⟩) (k1_off65_inb k ⟨2, by decide⟩) (by decide) 2 (by decide) (by decide) (by decide)).trans ?_
        exact rv_word d L fl (wL L).val (2 * t1.val + 1) 1 (2 * k.val) 34 (by decide) (by omega) (by decide) g2 hR1 _
          (by rw [k1_off65_eq]; show 128 * k.val + 16 * 2 + 1024 + 2 = 1024 * 1 + 64 * (2 * k.val) + 34; omega) _
      have hw_v1775_2 : pair1_lt.sl.v1775_2 d L k g2 = Spec.tcol (blkWord fl (wL L).val (2 * t1.val + 1) (64 * (2 * k.val) + 35)) := by
        refine (rv_extract d L g2 (k1_off65 k ⟨2, by decide⟩) (k1_off65_inb k ⟨2, by decide⟩) (by decide) 3 (by decide) (by decide) (by decide)).trans ?_
        exact rv_word d L fl (wL L).val (2 * t1.val + 1) 1 (2 * k.val) 35 (by decide) (by omega) (by decide) g2 hR1 _
          (by rw [k1_off65_eq]; show 128 * k.val + 16 * 2 + 1024 + 3 = 1024 * 1 + 64 * (2 * k.val) + 35; omega) _
      have hw_v1811_2 : pair1_lt.sl.v1811_2 d L k g2 = Spec.tcol (blkWord fl (wL L).val (2 * t1.val + 1) (64 * (2 * k.val) + 36)) := by
        refine (rv_extract d L g2 (k1_off65 k ⟨2, by decide⟩) (k1_off65_inb k ⟨2, by decide⟩) (by decide) 4 (by decide) (by decide) (by decide)).trans ?_
        exact rv_word d L fl (wL L).val (2 * t1.val + 1) 1 (2 * k.val) 36 (by decide) (by omega) (by decide) g2 hR1 _
          (by rw [k1_off65_eq]; show 128 * k.val + 16 * 2 + 1024 + 4 = 1024 * 1 + 64 * (2 * k.val) + 36; omega) _
      have hw_v1847_2 : pair1_lt.sl.v1847_2 d L k g2 = Spec.tcol (blkWord fl (wL L).val (2 * t1.val + 1) (64 * (2 * k.val) + 37)) := by
        refine (rv_extract d L g2 (k1_off65 k ⟨2, by decide⟩) (k1_off65_inb k ⟨2, by decide⟩) (by decide) 5 (by decide) (by decide) (by decide)).trans ?_
        exact rv_word d L fl (wL L).val (2 * t1.val + 1) 1 (2 * k.val) 37 (by decide) (by omega) (by decide) g2 hR1 _
          (by rw [k1_off65_eq]; show 128 * k.val + 16 * 2 + 1024 + 5 = 1024 * 1 + 64 * (2 * k.val) + 37; omega) _
      have hw_v1883_2 : pair1_lt.sl.v1883_2 d L k g2 = Spec.tcol (blkWord fl (wL L).val (2 * t1.val + 1) (64 * (2 * k.val) + 38)) := by
        refine (rv_extract d L g2 (k1_off65 k ⟨2, by decide⟩) (k1_off65_inb k ⟨2, by decide⟩) (by decide) 6 (by decide) (by decide) (by decide)).trans ?_
        exact rv_word d L fl (wL L).val (2 * t1.val + 1) 1 (2 * k.val) 38 (by decide) (by omega) (by decide) g2 hR1 _
          (by rw [k1_off65_eq]; show 128 * k.val + 16 * 2 + 1024 + 6 = 1024 * 1 + 64 * (2 * k.val) + 38; omega) _
      have hw_v1919_2 : pair1_lt.sl.v1919_2 d L k g2 = Spec.tcol (blkWord fl (wL L).val (2 * t1.val + 1) (64 * (2 * k.val) + 39)) := by
        refine (rv_extract d L g2 (k1_off65 k ⟨2, by decide⟩) (k1_off65_inb k ⟨2, by decide⟩) (by decide) 7 (by decide) (by decide) (by decide)).trans ?_
        exact rv_word d L fl (wL L).val (2 * t1.val + 1) 1 (2 * k.val) 39 (by decide) (by omega) (by decide) g2 hR1 _
          (by rw [k1_off65_eq]; show 128 * k.val + 16 * 2 + 1024 + 7 = 1024 * 1 + 64 * (2 * k.val) + 39; omega) _
      have hw_v1955_2 : pair1_lt.sl.v1955_2 d L k g2 = Spec.tcol (blkWord fl (wL L).val (2 * t1.val + 1) (64 * (2 * k.val) + 40)) := by
        refine (rv_extract d L g2 (k1_off65 k ⟨2, by decide⟩) (k1_off65_inb k ⟨2, by decide⟩) (by decide) 8 (by decide) (by decide) (by decide)).trans ?_
        exact rv_word d L fl (wL L).val (2 * t1.val + 1) 1 (2 * k.val) 40 (by decide) (by omega) (by decide) g2 hR1 _
          (by rw [k1_off65_eq]; show 128 * k.val + 16 * 2 + 1024 + 8 = 1024 * 1 + 64 * (2 * k.val) + 40; omega) _
      have hw_v1991_2 : pair1_lt.sl.v1991_2 d L k g2 = Spec.tcol (blkWord fl (wL L).val (2 * t1.val + 1) (64 * (2 * k.val) + 41)) := by
        refine (rv_extract d L g2 (k1_off65 k ⟨2, by decide⟩) (k1_off65_inb k ⟨2, by decide⟩) (by decide) 9 (by decide) (by decide) (by decide)).trans ?_
        exact rv_word d L fl (wL L).val (2 * t1.val + 1) 1 (2 * k.val) 41 (by decide) (by omega) (by decide) g2 hR1 _
          (by rw [k1_off65_eq]; show 128 * k.val + 16 * 2 + 1024 + 9 = 1024 * 1 + 64 * (2 * k.val) + 41; omega) _
      have hw_v2027_2 : pair1_lt.sl.v2027_2 d L k g2 = Spec.tcol (blkWord fl (wL L).val (2 * t1.val + 1) (64 * (2 * k.val) + 42)) := by
        refine (rv_extract d L g2 (k1_off65 k ⟨2, by decide⟩) (k1_off65_inb k ⟨2, by decide⟩) (by decide) 10 (by decide) (by decide) (by decide)).trans ?_
        exact rv_word d L fl (wL L).val (2 * t1.val + 1) 1 (2 * k.val) 42 (by decide) (by omega) (by decide) g2 hR1 _
          (by rw [k1_off65_eq]; show 128 * k.val + 16 * 2 + 1024 + 10 = 1024 * 1 + 64 * (2 * k.val) + 42; omega) _
      have hw_v2063_2 : pair1_lt.sl.v2063_2 d L k g2 = Spec.tcol (blkWord fl (wL L).val (2 * t1.val + 1) (64 * (2 * k.val) + 43)) := by
        refine (rv_extract d L g2 (k1_off65 k ⟨2, by decide⟩) (k1_off65_inb k ⟨2, by decide⟩) (by decide) 11 (by decide) (by decide) (by decide)).trans ?_
        exact rv_word d L fl (wL L).val (2 * t1.val + 1) 1 (2 * k.val) 43 (by decide) (by omega) (by decide) g2 hR1 _
          (by rw [k1_off65_eq]; show 128 * k.val + 16 * 2 + 1024 + 11 = 1024 * 1 + 64 * (2 * k.val) + 43; omega) _
      have hw_v2099_2 : pair1_lt.sl.v2099_2 d L k g2 = Spec.tcol (blkWord fl (wL L).val (2 * t1.val + 1) (64 * (2 * k.val) + 44)) := by
        refine (rv_extract d L g2 (k1_off65 k ⟨2, by decide⟩) (k1_off65_inb k ⟨2, by decide⟩) (by decide) 12 (by decide) (by decide) (by decide)).trans ?_
        exact rv_word d L fl (wL L).val (2 * t1.val + 1) 1 (2 * k.val) 44 (by decide) (by omega) (by decide) g2 hR1 _
          (by rw [k1_off65_eq]; show 128 * k.val + 16 * 2 + 1024 + 12 = 1024 * 1 + 64 * (2 * k.val) + 44; omega) _
      have hw_v2135_2 : pair1_lt.sl.v2135_2 d L k g2 = Spec.tcol (blkWord fl (wL L).val (2 * t1.val + 1) (64 * (2 * k.val) + 45)) := by
        refine (rv_extract d L g2 (k1_off65 k ⟨2, by decide⟩) (k1_off65_inb k ⟨2, by decide⟩) (by decide) 13 (by decide) (by decide) (by decide)).trans ?_
        exact rv_word d L fl (wL L).val (2 * t1.val + 1) 1 (2 * k.val) 45 (by decide) (by omega) (by decide) g2 hR1 _
          (by rw [k1_off65_eq]; show 128 * k.val + 16 * 2 + 1024 + 13 = 1024 * 1 + 64 * (2 * k.val) + 45; omega) _
      have hw_v2171_2 : pair1_lt.sl.v2171_2 d L k g2 = Spec.tcol (blkWord fl (wL L).val (2 * t1.val + 1) (64 * (2 * k.val) + 46)) := by
        refine (rv_extract d L g2 (k1_off65 k ⟨2, by decide⟩) (k1_off65_inb k ⟨2, by decide⟩) (by decide) 14 (by decide) (by decide) (by decide)).trans ?_
        exact rv_word d L fl (wL L).val (2 * t1.val + 1) 1 (2 * k.val) 46 (by decide) (by omega) (by decide) g2 hR1 _
          (by rw [k1_off65_eq]; show 128 * k.val + 16 * 2 + 1024 + 14 = 1024 * 1 + 64 * (2 * k.val) + 46; omega) _
      have hw_v2207_2 : pair1_lt.sl.v2207_2 d L k g2 = Spec.tcol (blkWord fl (wL L).val (2 * t1.val + 1) (64 * (2 * k.val) + 47)) := by
        refine (rv_extract d L g2 (k1_off65 k ⟨2, by decide⟩) (k1_off65_inb k ⟨2, by decide⟩) (by decide) 15 (by decide) (by decide) (by decide)).trans ?_
        exact rv_word d L fl (wL L).val (2 * t1.val + 1) 1 (2 * k.val) 47 (by decide) (by omega) (by decide) g2 hR1 _
          (by rw [k1_off65_eq]; show 128 * k.val + 16 * 2 + 1024 + 15 = 1024 * 1 + 64 * (2 * k.val) + 47; omega) _
      have hw_v1456 : pair1_lt.sl.v1456 d L k g2 = Spec.tcol (blkWord fl (wL L).val (2 * t1.val + 1) (64 * (2 * k.val) + 48)) := by
        refine (rv_extract d L g2 (k1_off82 k) (k1_off82_inb k) (by decide) 0 (by decide) (by decide) (by decide)).trans ?_
        exact rv_word d L fl (wL L).val (2 * t1.val + 1) 1 (2 * k.val) 48 (by decide) (by omega) (by decide) g2 hR1 _
          (by rw [k1_off82_eq]; show 128 * k.val + 1072 + 0 = 1024 * 1 + 64 * (2 * k.val) + 48; omega) _
      have hw_v1490 : pair1_lt.sl.v1490 d L k g2 = Spec.tcol (blkWord fl (wL L).val (2 * t1.val + 1) (64 * (2 * k.val) + 49)) := by
        refine (rv_extract d L g2 (k1_off82 k) (k1_off82_inb k) (by decide) 1 (by decide) (by decide) (by decide)).trans ?_
        exact rv_word d L fl (wL L).val (2 * t1.val + 1) 1 (2 * k.val) 49 (by decide) (by omega) (by decide) g2 hR1 _
          (by rw [k1_off82_eq]; show 128 * k.val + 1072 + 1 = 1024 * 1 + 64 * (2 * k.val) + 49; omega) _
      have hw_v1667_3 : pair1_lt.sl.v1667_3 d L k g2 = Spec.tcol (blkWord fl (wL L).val (2 * t1.val + 1) (64 * (2 * k.val + 1) + 0)) := by
        refine (rv_extract d L g2 (k1_off92 k ⟨0, by decide⟩) (k1_off92_inb k ⟨0, by decide⟩) (by decide) 0 (by decide) (by decide) (by decide)).trans ?_
        exact rv_word d L fl (wL L).val (2 * t1.val + 1) 1 (2 * k.val + 1) 0 (by decide) (by omega) (by decide) g2 hR1 _
          (by rw [k1_off92_eq]; show 128 * k.val + 16 * 0 + 1088 + 0 = 1024 * 1 + 64 * (2 * k.val + 1) + 0; omega) _
      have hw_v1703_3 : pair1_lt.sl.v1703_3 d L k g2 = Spec.tcol (blkWord fl (wL L).val (2 * t1.val + 1) (64 * (2 * k.val + 1) + 1)) := by
        refine (rv_extract d L g2 (k1_off92 k ⟨0, by decide⟩) (k1_off92_inb k ⟨0, by decide⟩) (by decide) 1 (by decide) (by decide) (by decide)).trans ?_
        exact rv_word d L fl (wL L).val (2 * t1.val + 1) 1 (2 * k.val + 1) 1 (by decide) (by omega) (by decide) g2 hR1 _
          (by rw [k1_off92_eq]; show 128 * k.val + 16 * 0 + 1088 + 1 = 1024 * 1 + 64 * (2 * k.val + 1) + 1; omega) _
      have hw_v1739_3 : pair1_lt.sl.v1739_3 d L k g2 = Spec.tcol (blkWord fl (wL L).val (2 * t1.val + 1) (64 * (2 * k.val + 1) + 2)) := by
        refine (rv_extract d L g2 (k1_off92 k ⟨0, by decide⟩) (k1_off92_inb k ⟨0, by decide⟩) (by decide) 2 (by decide) (by decide) (by decide)).trans ?_
        exact rv_word d L fl (wL L).val (2 * t1.val + 1) 1 (2 * k.val + 1) 2 (by decide) (by omega) (by decide) g2 hR1 _
          (by rw [k1_off92_eq]; show 128 * k.val + 16 * 0 + 1088 + 2 = 1024 * 1 + 64 * (2 * k.val + 1) + 2; omega) _
      have hw_v1775_3 : pair1_lt.sl.v1775_3 d L k g2 = Spec.tcol (blkWord fl (wL L).val (2 * t1.val + 1) (64 * (2 * k.val + 1) + 3)) := by
        refine (rv_extract d L g2 (k1_off92 k ⟨0, by decide⟩) (k1_off92_inb k ⟨0, by decide⟩) (by decide) 3 (by decide) (by decide) (by decide)).trans ?_
        exact rv_word d L fl (wL L).val (2 * t1.val + 1) 1 (2 * k.val + 1) 3 (by decide) (by omega) (by decide) g2 hR1 _
          (by rw [k1_off92_eq]; show 128 * k.val + 16 * 0 + 1088 + 3 = 1024 * 1 + 64 * (2 * k.val + 1) + 3; omega) _
      have hw_v1811_3 : pair1_lt.sl.v1811_3 d L k g2 = Spec.tcol (blkWord fl (wL L).val (2 * t1.val + 1) (64 * (2 * k.val + 1) + 4)) := by
        refine (rv_extract d L g2 (k1_off92 k ⟨0, by decide⟩) (k1_off92_inb k ⟨0, by decide⟩) (by decide) 4 (by decide) (by decide) (by decide)).trans ?_
        exact rv_word d L fl (wL L).val (2 * t1.val + 1) 1 (2 * k.val + 1) 4 (by decide) (by omega) (by decide) g2 hR1 _
          (by rw [k1_off92_eq]; show 128 * k.val + 16 * 0 + 1088 + 4 = 1024 * 1 + 64 * (2 * k.val + 1) + 4; omega) _
      have hw_v1847_3 : pair1_lt.sl.v1847_3 d L k g2 = Spec.tcol (blkWord fl (wL L).val (2 * t1.val + 1) (64 * (2 * k.val + 1) + 5)) := by
        refine (rv_extract d L g2 (k1_off92 k ⟨0, by decide⟩) (k1_off92_inb k ⟨0, by decide⟩) (by decide) 5 (by decide) (by decide) (by decide)).trans ?_
        exact rv_word d L fl (wL L).val (2 * t1.val + 1) 1 (2 * k.val + 1) 5 (by decide) (by omega) (by decide) g2 hR1 _
          (by rw [k1_off92_eq]; show 128 * k.val + 16 * 0 + 1088 + 5 = 1024 * 1 + 64 * (2 * k.val + 1) + 5; omega) _
      have hw_v1883_3 : pair1_lt.sl.v1883_3 d L k g2 = Spec.tcol (blkWord fl (wL L).val (2 * t1.val + 1) (64 * (2 * k.val + 1) + 6)) := by
        refine (rv_extract d L g2 (k1_off92 k ⟨0, by decide⟩) (k1_off92_inb k ⟨0, by decide⟩) (by decide) 6 (by decide) (by decide) (by decide)).trans ?_
        exact rv_word d L fl (wL L).val (2 * t1.val + 1) 1 (2 * k.val + 1) 6 (by decide) (by omega) (by decide) g2 hR1 _
          (by rw [k1_off92_eq]; show 128 * k.val + 16 * 0 + 1088 + 6 = 1024 * 1 + 64 * (2 * k.val + 1) + 6; omega) _
      have hw_v1919_3 : pair1_lt.sl.v1919_3 d L k g2 = Spec.tcol (blkWord fl (wL L).val (2 * t1.val + 1) (64 * (2 * k.val + 1) + 7)) := by
        refine (rv_extract d L g2 (k1_off92 k ⟨0, by decide⟩) (k1_off92_inb k ⟨0, by decide⟩) (by decide) 7 (by decide) (by decide) (by decide)).trans ?_
        exact rv_word d L fl (wL L).val (2 * t1.val + 1) 1 (2 * k.val + 1) 7 (by decide) (by omega) (by decide) g2 hR1 _
          (by rw [k1_off92_eq]; show 128 * k.val + 16 * 0 + 1088 + 7 = 1024 * 1 + 64 * (2 * k.val + 1) + 7; omega) _
      have hw_v1955_3 : pair1_lt.sl.v1955_3 d L k g2 = Spec.tcol (blkWord fl (wL L).val (2 * t1.val + 1) (64 * (2 * k.val + 1) + 8)) := by
        refine (rv_extract d L g2 (k1_off92 k ⟨0, by decide⟩) (k1_off92_inb k ⟨0, by decide⟩) (by decide) 8 (by decide) (by decide) (by decide)).trans ?_
        exact rv_word d L fl (wL L).val (2 * t1.val + 1) 1 (2 * k.val + 1) 8 (by decide) (by omega) (by decide) g2 hR1 _
          (by rw [k1_off92_eq]; show 128 * k.val + 16 * 0 + 1088 + 8 = 1024 * 1 + 64 * (2 * k.val + 1) + 8; omega) _
      have hw_v1991_3 : pair1_lt.sl.v1991_3 d L k g2 = Spec.tcol (blkWord fl (wL L).val (2 * t1.val + 1) (64 * (2 * k.val + 1) + 9)) := by
        refine (rv_extract d L g2 (k1_off92 k ⟨0, by decide⟩) (k1_off92_inb k ⟨0, by decide⟩) (by decide) 9 (by decide) (by decide) (by decide)).trans ?_
        exact rv_word d L fl (wL L).val (2 * t1.val + 1) 1 (2 * k.val + 1) 9 (by decide) (by omega) (by decide) g2 hR1 _
          (by rw [k1_off92_eq]; show 128 * k.val + 16 * 0 + 1088 + 9 = 1024 * 1 + 64 * (2 * k.val + 1) + 9; omega) _
      have hw_v2027_3 : pair1_lt.sl.v2027_3 d L k g2 = Spec.tcol (blkWord fl (wL L).val (2 * t1.val + 1) (64 * (2 * k.val + 1) + 10)) := by
        refine (rv_extract d L g2 (k1_off92 k ⟨0, by decide⟩) (k1_off92_inb k ⟨0, by decide⟩) (by decide) 10 (by decide) (by decide) (by decide)).trans ?_
        exact rv_word d L fl (wL L).val (2 * t1.val + 1) 1 (2 * k.val + 1) 10 (by decide) (by omega) (by decide) g2 hR1 _
          (by rw [k1_off92_eq]; show 128 * k.val + 16 * 0 + 1088 + 10 = 1024 * 1 + 64 * (2 * k.val + 1) + 10; omega) _
      have hw_v2063_3 : pair1_lt.sl.v2063_3 d L k g2 = Spec.tcol (blkWord fl (wL L).val (2 * t1.val + 1) (64 * (2 * k.val + 1) + 11)) := by
        refine (rv_extract d L g2 (k1_off92 k ⟨0, by decide⟩) (k1_off92_inb k ⟨0, by decide⟩) (by decide) 11 (by decide) (by decide) (by decide)).trans ?_
        exact rv_word d L fl (wL L).val (2 * t1.val + 1) 1 (2 * k.val + 1) 11 (by decide) (by omega) (by decide) g2 hR1 _
          (by rw [k1_off92_eq]; show 128 * k.val + 16 * 0 + 1088 + 11 = 1024 * 1 + 64 * (2 * k.val + 1) + 11; omega) _
      have hw_v2099_3 : pair1_lt.sl.v2099_3 d L k g2 = Spec.tcol (blkWord fl (wL L).val (2 * t1.val + 1) (64 * (2 * k.val + 1) + 12)) := by
        refine (rv_extract d L g2 (k1_off92 k ⟨0, by decide⟩) (k1_off92_inb k ⟨0, by decide⟩) (by decide) 12 (by decide) (by decide) (by decide)).trans ?_
        exact rv_word d L fl (wL L).val (2 * t1.val + 1) 1 (2 * k.val + 1) 12 (by decide) (by omega) (by decide) g2 hR1 _
          (by rw [k1_off92_eq]; show 128 * k.val + 16 * 0 + 1088 + 12 = 1024 * 1 + 64 * (2 * k.val + 1) + 12; omega) _
      have hw_v2135_3 : pair1_lt.sl.v2135_3 d L k g2 = Spec.tcol (blkWord fl (wL L).val (2 * t1.val + 1) (64 * (2 * k.val + 1) + 13)) := by
        refine (rv_extract d L g2 (k1_off92 k ⟨0, by decide⟩) (k1_off92_inb k ⟨0, by decide⟩) (by decide) 13 (by decide) (by decide) (by decide)).trans ?_
        exact rv_word d L fl (wL L).val (2 * t1.val + 1) 1 (2 * k.val + 1) 13 (by decide) (by omega) (by decide) g2 hR1 _
          (by rw [k1_off92_eq]; show 128 * k.val + 16 * 0 + 1088 + 13 = 1024 * 1 + 64 * (2 * k.val + 1) + 13; omega) _
      have hw_v2171_3 : pair1_lt.sl.v2171_3 d L k g2 = Spec.tcol (blkWord fl (wL L).val (2 * t1.val + 1) (64 * (2 * k.val + 1) + 14)) := by
        refine (rv_extract d L g2 (k1_off92 k ⟨0, by decide⟩) (k1_off92_inb k ⟨0, by decide⟩) (by decide) 14 (by decide) (by decide) (by decide)).trans ?_
        exact rv_word d L fl (wL L).val (2 * t1.val + 1) 1 (2 * k.val + 1) 14 (by decide) (by omega) (by decide) g2 hR1 _
          (by rw [k1_off92_eq]; show 128 * k.val + 16 * 0 + 1088 + 14 = 1024 * 1 + 64 * (2 * k.val + 1) + 14; omega) _
      have hw_v2207_3 : pair1_lt.sl.v2207_3 d L k g2 = Spec.tcol (blkWord fl (wL L).val (2 * t1.val + 1) (64 * (2 * k.val + 1) + 15)) := by
        refine (rv_extract d L g2 (k1_off92 k ⟨0, by decide⟩) (k1_off92_inb k ⟨0, by decide⟩) (by decide) 15 (by decide) (by decide) (by decide)).trans ?_
        exact rv_word d L fl (wL L).val (2 * t1.val + 1) 1 (2 * k.val + 1) 15 (by decide) (by omega) (by decide) g2 hR1 _
          (by rw [k1_off92_eq]; show 128 * k.val + 16 * 0 + 1088 + 15 = 1024 * 1 + 64 * (2 * k.val + 1) + 15; omega) _
      have hw_v1667_4 : pair1_lt.sl.v1667_4 d L k g2 = Spec.tcol (blkWord fl (wL L).val (2 * t1.val + 1) (64 * (2 * k.val + 1) + 16)) := by
        refine (rv_extract d L g2 (k1_off92 k ⟨1, by decide⟩) (k1_off92_inb k ⟨1, by decide⟩) (by decide) 0 (by decide) (by decide) (by decide)).trans ?_
        exact rv_word d L fl (wL L).val (2 * t1.val + 1) 1 (2 * k.val + 1) 16 (by decide) (by omega) (by decide) g2 hR1 _
          (by rw [k1_off92_eq]; show 128 * k.val + 16 * 1 + 1088 + 0 = 1024 * 1 + 64 * (2 * k.val + 1) + 16; omega) _
      have hw_v1703_4 : pair1_lt.sl.v1703_4 d L k g2 = Spec.tcol (blkWord fl (wL L).val (2 * t1.val + 1) (64 * (2 * k.val + 1) + 17)) := by
        refine (rv_extract d L g2 (k1_off92 k ⟨1, by decide⟩) (k1_off92_inb k ⟨1, by decide⟩) (by decide) 1 (by decide) (by decide) (by decide)).trans ?_
        exact rv_word d L fl (wL L).val (2 * t1.val + 1) 1 (2 * k.val + 1) 17 (by decide) (by omega) (by decide) g2 hR1 _
          (by rw [k1_off92_eq]; show 128 * k.val + 16 * 1 + 1088 + 1 = 1024 * 1 + 64 * (2 * k.val + 1) + 17; omega) _
      have hw_v1739_4 : pair1_lt.sl.v1739_4 d L k g2 = Spec.tcol (blkWord fl (wL L).val (2 * t1.val + 1) (64 * (2 * k.val + 1) + 18)) := by
        refine (rv_extract d L g2 (k1_off92 k ⟨1, by decide⟩) (k1_off92_inb k ⟨1, by decide⟩) (by decide) 2 (by decide) (by decide) (by decide)).trans ?_
        exact rv_word d L fl (wL L).val (2 * t1.val + 1) 1 (2 * k.val + 1) 18 (by decide) (by omega) (by decide) g2 hR1 _
          (by rw [k1_off92_eq]; show 128 * k.val + 16 * 1 + 1088 + 2 = 1024 * 1 + 64 * (2 * k.val + 1) + 18; omega) _
      have hw_v1775_4 : pair1_lt.sl.v1775_4 d L k g2 = Spec.tcol (blkWord fl (wL L).val (2 * t1.val + 1) (64 * (2 * k.val + 1) + 19)) := by
        refine (rv_extract d L g2 (k1_off92 k ⟨1, by decide⟩) (k1_off92_inb k ⟨1, by decide⟩) (by decide) 3 (by decide) (by decide) (by decide)).trans ?_
        exact rv_word d L fl (wL L).val (2 * t1.val + 1) 1 (2 * k.val + 1) 19 (by decide) (by omega) (by decide) g2 hR1 _
          (by rw [k1_off92_eq]; show 128 * k.val + 16 * 1 + 1088 + 3 = 1024 * 1 + 64 * (2 * k.val + 1) + 19; omega) _
      have hw_v1811_4 : pair1_lt.sl.v1811_4 d L k g2 = Spec.tcol (blkWord fl (wL L).val (2 * t1.val + 1) (64 * (2 * k.val + 1) + 20)) := by
        refine (rv_extract d L g2 (k1_off92 k ⟨1, by decide⟩) (k1_off92_inb k ⟨1, by decide⟩) (by decide) 4 (by decide) (by decide) (by decide)).trans ?_
        exact rv_word d L fl (wL L).val (2 * t1.val + 1) 1 (2 * k.val + 1) 20 (by decide) (by omega) (by decide) g2 hR1 _
          (by rw [k1_off92_eq]; show 128 * k.val + 16 * 1 + 1088 + 4 = 1024 * 1 + 64 * (2 * k.val + 1) + 20; omega) _
      have hw_v1847_4 : pair1_lt.sl.v1847_4 d L k g2 = Spec.tcol (blkWord fl (wL L).val (2 * t1.val + 1) (64 * (2 * k.val + 1) + 21)) := by
        refine (rv_extract d L g2 (k1_off92 k ⟨1, by decide⟩) (k1_off92_inb k ⟨1, by decide⟩) (by decide) 5 (by decide) (by decide) (by decide)).trans ?_
        exact rv_word d L fl (wL L).val (2 * t1.val + 1) 1 (2 * k.val + 1) 21 (by decide) (by omega) (by decide) g2 hR1 _
          (by rw [k1_off92_eq]; show 128 * k.val + 16 * 1 + 1088 + 5 = 1024 * 1 + 64 * (2 * k.val + 1) + 21; omega) _
      have hw_v1883_4 : pair1_lt.sl.v1883_4 d L k g2 = Spec.tcol (blkWord fl (wL L).val (2 * t1.val + 1) (64 * (2 * k.val + 1) + 22)) := by
        refine (rv_extract d L g2 (k1_off92 k ⟨1, by decide⟩) (k1_off92_inb k ⟨1, by decide⟩) (by decide) 6 (by decide) (by decide) (by decide)).trans ?_
        exact rv_word d L fl (wL L).val (2 * t1.val + 1) 1 (2 * k.val + 1) 22 (by decide) (by omega) (by decide) g2 hR1 _
          (by rw [k1_off92_eq]; show 128 * k.val + 16 * 1 + 1088 + 6 = 1024 * 1 + 64 * (2 * k.val + 1) + 22; omega) _
      have hw_v1919_4 : pair1_lt.sl.v1919_4 d L k g2 = Spec.tcol (blkWord fl (wL L).val (2 * t1.val + 1) (64 * (2 * k.val + 1) + 23)) := by
        refine (rv_extract d L g2 (k1_off92 k ⟨1, by decide⟩) (k1_off92_inb k ⟨1, by decide⟩) (by decide) 7 (by decide) (by decide) (by decide)).trans ?_
        exact rv_word d L fl (wL L).val (2 * t1.val + 1) 1 (2 * k.val + 1) 23 (by decide) (by omega) (by decide) g2 hR1 _
          (by rw [k1_off92_eq]; show 128 * k.val + 16 * 1 + 1088 + 7 = 1024 * 1 + 64 * (2 * k.val + 1) + 23; omega) _
      have hw_v1955_4 : pair1_lt.sl.v1955_4 d L k g2 = Spec.tcol (blkWord fl (wL L).val (2 * t1.val + 1) (64 * (2 * k.val + 1) + 24)) := by
        refine (rv_extract d L g2 (k1_off92 k ⟨1, by decide⟩) (k1_off92_inb k ⟨1, by decide⟩) (by decide) 8 (by decide) (by decide) (by decide)).trans ?_
        exact rv_word d L fl (wL L).val (2 * t1.val + 1) 1 (2 * k.val + 1) 24 (by decide) (by omega) (by decide) g2 hR1 _
          (by rw [k1_off92_eq]; show 128 * k.val + 16 * 1 + 1088 + 8 = 1024 * 1 + 64 * (2 * k.val + 1) + 24; omega) _
      have hw_v1991_4 : pair1_lt.sl.v1991_4 d L k g2 = Spec.tcol (blkWord fl (wL L).val (2 * t1.val + 1) (64 * (2 * k.val + 1) + 25)) := by
        refine (rv_extract d L g2 (k1_off92 k ⟨1, by decide⟩) (k1_off92_inb k ⟨1, by decide⟩) (by decide) 9 (by decide) (by decide) (by decide)).trans ?_
        exact rv_word d L fl (wL L).val (2 * t1.val + 1) 1 (2 * k.val + 1) 25 (by decide) (by omega) (by decide) g2 hR1 _
          (by rw [k1_off92_eq]; show 128 * k.val + 16 * 1 + 1088 + 9 = 1024 * 1 + 64 * (2 * k.val + 1) + 25; omega) _
      have hw_v2027_4 : pair1_lt.sl.v2027_4 d L k g2 = Spec.tcol (blkWord fl (wL L).val (2 * t1.val + 1) (64 * (2 * k.val + 1) + 26)) := by
        refine (rv_extract d L g2 (k1_off92 k ⟨1, by decide⟩) (k1_off92_inb k ⟨1, by decide⟩) (by decide) 10 (by decide) (by decide) (by decide)).trans ?_
        exact rv_word d L fl (wL L).val (2 * t1.val + 1) 1 (2 * k.val + 1) 26 (by decide) (by omega) (by decide) g2 hR1 _
          (by rw [k1_off92_eq]; show 128 * k.val + 16 * 1 + 1088 + 10 = 1024 * 1 + 64 * (2 * k.val + 1) + 26; omega) _
      have hw_v2063_4 : pair1_lt.sl.v2063_4 d L k g2 = Spec.tcol (blkWord fl (wL L).val (2 * t1.val + 1) (64 * (2 * k.val + 1) + 27)) := by
        refine (rv_extract d L g2 (k1_off92 k ⟨1, by decide⟩) (k1_off92_inb k ⟨1, by decide⟩) (by decide) 11 (by decide) (by decide) (by decide)).trans ?_
        exact rv_word d L fl (wL L).val (2 * t1.val + 1) 1 (2 * k.val + 1) 27 (by decide) (by omega) (by decide) g2 hR1 _
          (by rw [k1_off92_eq]; show 128 * k.val + 16 * 1 + 1088 + 11 = 1024 * 1 + 64 * (2 * k.val + 1) + 27; omega) _
      have hw_v2099_4 : pair1_lt.sl.v2099_4 d L k g2 = Spec.tcol (blkWord fl (wL L).val (2 * t1.val + 1) (64 * (2 * k.val + 1) + 28)) := by
        refine (rv_extract d L g2 (k1_off92 k ⟨1, by decide⟩) (k1_off92_inb k ⟨1, by decide⟩) (by decide) 12 (by decide) (by decide) (by decide)).trans ?_
        exact rv_word d L fl (wL L).val (2 * t1.val + 1) 1 (2 * k.val + 1) 28 (by decide) (by omega) (by decide) g2 hR1 _
          (by rw [k1_off92_eq]; show 128 * k.val + 16 * 1 + 1088 + 12 = 1024 * 1 + 64 * (2 * k.val + 1) + 28; omega) _
      have hw_v2135_4 : pair1_lt.sl.v2135_4 d L k g2 = Spec.tcol (blkWord fl (wL L).val (2 * t1.val + 1) (64 * (2 * k.val + 1) + 29)) := by
        refine (rv_extract d L g2 (k1_off92 k ⟨1, by decide⟩) (k1_off92_inb k ⟨1, by decide⟩) (by decide) 13 (by decide) (by decide) (by decide)).trans ?_
        exact rv_word d L fl (wL L).val (2 * t1.val + 1) 1 (2 * k.val + 1) 29 (by decide) (by omega) (by decide) g2 hR1 _
          (by rw [k1_off92_eq]; show 128 * k.val + 16 * 1 + 1088 + 13 = 1024 * 1 + 64 * (2 * k.val + 1) + 29; omega) _
      have hw_v2171_4 : pair1_lt.sl.v2171_4 d L k g2 = Spec.tcol (blkWord fl (wL L).val (2 * t1.val + 1) (64 * (2 * k.val + 1) + 30)) := by
        refine (rv_extract d L g2 (k1_off92 k ⟨1, by decide⟩) (k1_off92_inb k ⟨1, by decide⟩) (by decide) 14 (by decide) (by decide) (by decide)).trans ?_
        exact rv_word d L fl (wL L).val (2 * t1.val + 1) 1 (2 * k.val + 1) 30 (by decide) (by omega) (by decide) g2 hR1 _
          (by rw [k1_off92_eq]; show 128 * k.val + 16 * 1 + 1088 + 14 = 1024 * 1 + 64 * (2 * k.val + 1) + 30; omega) _
      have hw_v2207_4 : pair1_lt.sl.v2207_4 d L k g2 = Spec.tcol (blkWord fl (wL L).val (2 * t1.val + 1) (64 * (2 * k.val + 1) + 31)) := by
        refine (rv_extract d L g2 (k1_off92 k ⟨1, by decide⟩) (k1_off92_inb k ⟨1, by decide⟩) (by decide) 15 (by decide) (by decide) (by decide)).trans ?_
        exact rv_word d L fl (wL L).val (2 * t1.val + 1) 1 (2 * k.val + 1) 31 (by decide) (by omega) (by decide) g2 hR1 _
          (by rw [k1_off92_eq]; show 128 * k.val + 16 * 1 + 1088 + 15 = 1024 * 1 + 64 * (2 * k.val + 1) + 31; omega) _
      have hw_v1667_5 : pair1_lt.sl.v1667_5 d L k g2 = Spec.tcol (blkWord fl (wL L).val (2 * t1.val + 1) (64 * (2 * k.val + 1) + 32)) := by
        refine (rv_extract d L g2 (k1_off92 k ⟨2, by decide⟩) (k1_off92_inb k ⟨2, by decide⟩) (by decide) 0 (by decide) (by decide) (by decide)).trans ?_
        exact rv_word d L fl (wL L).val (2 * t1.val + 1) 1 (2 * k.val + 1) 32 (by decide) (by omega) (by decide) g2 hR1 _
          (by rw [k1_off92_eq]; show 128 * k.val + 16 * 2 + 1088 + 0 = 1024 * 1 + 64 * (2 * k.val + 1) + 32; omega) _
      have hw_v1703_5 : pair1_lt.sl.v1703_5 d L k g2 = Spec.tcol (blkWord fl (wL L).val (2 * t1.val + 1) (64 * (2 * k.val + 1) + 33)) := by
        refine (rv_extract d L g2 (k1_off92 k ⟨2, by decide⟩) (k1_off92_inb k ⟨2, by decide⟩) (by decide) 1 (by decide) (by decide) (by decide)).trans ?_
        exact rv_word d L fl (wL L).val (2 * t1.val + 1) 1 (2 * k.val + 1) 33 (by decide) (by omega) (by decide) g2 hR1 _
          (by rw [k1_off92_eq]; show 128 * k.val + 16 * 2 + 1088 + 1 = 1024 * 1 + 64 * (2 * k.val + 1) + 33; omega) _
      have hw_v1739_5 : pair1_lt.sl.v1739_5 d L k g2 = Spec.tcol (blkWord fl (wL L).val (2 * t1.val + 1) (64 * (2 * k.val + 1) + 34)) := by
        refine (rv_extract d L g2 (k1_off92 k ⟨2, by decide⟩) (k1_off92_inb k ⟨2, by decide⟩) (by decide) 2 (by decide) (by decide) (by decide)).trans ?_
        exact rv_word d L fl (wL L).val (2 * t1.val + 1) 1 (2 * k.val + 1) 34 (by decide) (by omega) (by decide) g2 hR1 _
          (by rw [k1_off92_eq]; show 128 * k.val + 16 * 2 + 1088 + 2 = 1024 * 1 + 64 * (2 * k.val + 1) + 34; omega) _
      have hw_v1775_5 : pair1_lt.sl.v1775_5 d L k g2 = Spec.tcol (blkWord fl (wL L).val (2 * t1.val + 1) (64 * (2 * k.val + 1) + 35)) := by
        refine (rv_extract d L g2 (k1_off92 k ⟨2, by decide⟩) (k1_off92_inb k ⟨2, by decide⟩) (by decide) 3 (by decide) (by decide) (by decide)).trans ?_
        exact rv_word d L fl (wL L).val (2 * t1.val + 1) 1 (2 * k.val + 1) 35 (by decide) (by omega) (by decide) g2 hR1 _
          (by rw [k1_off92_eq]; show 128 * k.val + 16 * 2 + 1088 + 3 = 1024 * 1 + 64 * (2 * k.val + 1) + 35; omega) _
      have hw_v1811_5 : pair1_lt.sl.v1811_5 d L k g2 = Spec.tcol (blkWord fl (wL L).val (2 * t1.val + 1) (64 * (2 * k.val + 1) + 36)) := by
        refine (rv_extract d L g2 (k1_off92 k ⟨2, by decide⟩) (k1_off92_inb k ⟨2, by decide⟩) (by decide) 4 (by decide) (by decide) (by decide)).trans ?_
        exact rv_word d L fl (wL L).val (2 * t1.val + 1) 1 (2 * k.val + 1) 36 (by decide) (by omega) (by decide) g2 hR1 _
          (by rw [k1_off92_eq]; show 128 * k.val + 16 * 2 + 1088 + 4 = 1024 * 1 + 64 * (2 * k.val + 1) + 36; omega) _
      have hw_v1847_5 : pair1_lt.sl.v1847_5 d L k g2 = Spec.tcol (blkWord fl (wL L).val (2 * t1.val + 1) (64 * (2 * k.val + 1) + 37)) := by
        refine (rv_extract d L g2 (k1_off92 k ⟨2, by decide⟩) (k1_off92_inb k ⟨2, by decide⟩) (by decide) 5 (by decide) (by decide) (by decide)).trans ?_
        exact rv_word d L fl (wL L).val (2 * t1.val + 1) 1 (2 * k.val + 1) 37 (by decide) (by omega) (by decide) g2 hR1 _
          (by rw [k1_off92_eq]; show 128 * k.val + 16 * 2 + 1088 + 5 = 1024 * 1 + 64 * (2 * k.val + 1) + 37; omega) _
      have hw_v1883_5 : pair1_lt.sl.v1883_5 d L k g2 = Spec.tcol (blkWord fl (wL L).val (2 * t1.val + 1) (64 * (2 * k.val + 1) + 38)) := by
        refine (rv_extract d L g2 (k1_off92 k ⟨2, by decide⟩) (k1_off92_inb k ⟨2, by decide⟩) (by decide) 6 (by decide) (by decide) (by decide)).trans ?_
        exact rv_word d L fl (wL L).val (2 * t1.val + 1) 1 (2 * k.val + 1) 38 (by decide) (by omega) (by decide) g2 hR1 _
          (by rw [k1_off92_eq]; show 128 * k.val + 16 * 2 + 1088 + 6 = 1024 * 1 + 64 * (2 * k.val + 1) + 38; omega) _
      have hw_v1919_5 : pair1_lt.sl.v1919_5 d L k g2 = Spec.tcol (blkWord fl (wL L).val (2 * t1.val + 1) (64 * (2 * k.val + 1) + 39)) := by
        refine (rv_extract d L g2 (k1_off92 k ⟨2, by decide⟩) (k1_off92_inb k ⟨2, by decide⟩) (by decide) 7 (by decide) (by decide) (by decide)).trans ?_
        exact rv_word d L fl (wL L).val (2 * t1.val + 1) 1 (2 * k.val + 1) 39 (by decide) (by omega) (by decide) g2 hR1 _
          (by rw [k1_off92_eq]; show 128 * k.val + 16 * 2 + 1088 + 7 = 1024 * 1 + 64 * (2 * k.val + 1) + 39; omega) _
      have hw_v1955_5 : pair1_lt.sl.v1955_5 d L k g2 = Spec.tcol (blkWord fl (wL L).val (2 * t1.val + 1) (64 * (2 * k.val + 1) + 40)) := by
        refine (rv_extract d L g2 (k1_off92 k ⟨2, by decide⟩) (k1_off92_inb k ⟨2, by decide⟩) (by decide) 8 (by decide) (by decide) (by decide)).trans ?_
        exact rv_word d L fl (wL L).val (2 * t1.val + 1) 1 (2 * k.val + 1) 40 (by decide) (by omega) (by decide) g2 hR1 _
          (by rw [k1_off92_eq]; show 128 * k.val + 16 * 2 + 1088 + 8 = 1024 * 1 + 64 * (2 * k.val + 1) + 40; omega) _
      have hw_v1991_5 : pair1_lt.sl.v1991_5 d L k g2 = Spec.tcol (blkWord fl (wL L).val (2 * t1.val + 1) (64 * (2 * k.val + 1) + 41)) := by
        refine (rv_extract d L g2 (k1_off92 k ⟨2, by decide⟩) (k1_off92_inb k ⟨2, by decide⟩) (by decide) 9 (by decide) (by decide) (by decide)).trans ?_
        exact rv_word d L fl (wL L).val (2 * t1.val + 1) 1 (2 * k.val + 1) 41 (by decide) (by omega) (by decide) g2 hR1 _
          (by rw [k1_off92_eq]; show 128 * k.val + 16 * 2 + 1088 + 9 = 1024 * 1 + 64 * (2 * k.val + 1) + 41; omega) _
      have hw_v2027_5 : pair1_lt.sl.v2027_5 d L k g2 = Spec.tcol (blkWord fl (wL L).val (2 * t1.val + 1) (64 * (2 * k.val + 1) + 42)) := by
        refine (rv_extract d L g2 (k1_off92 k ⟨2, by decide⟩) (k1_off92_inb k ⟨2, by decide⟩) (by decide) 10 (by decide) (by decide) (by decide)).trans ?_
        exact rv_word d L fl (wL L).val (2 * t1.val + 1) 1 (2 * k.val + 1) 42 (by decide) (by omega) (by decide) g2 hR1 _
          (by rw [k1_off92_eq]; show 128 * k.val + 16 * 2 + 1088 + 10 = 1024 * 1 + 64 * (2 * k.val + 1) + 42; omega) _
      have hw_v2063_5 : pair1_lt.sl.v2063_5 d L k g2 = Spec.tcol (blkWord fl (wL L).val (2 * t1.val + 1) (64 * (2 * k.val + 1) + 43)) := by
        refine (rv_extract d L g2 (k1_off92 k ⟨2, by decide⟩) (k1_off92_inb k ⟨2, by decide⟩) (by decide) 11 (by decide) (by decide) (by decide)).trans ?_
        exact rv_word d L fl (wL L).val (2 * t1.val + 1) 1 (2 * k.val + 1) 43 (by decide) (by omega) (by decide) g2 hR1 _
          (by rw [k1_off92_eq]; show 128 * k.val + 16 * 2 + 1088 + 11 = 1024 * 1 + 64 * (2 * k.val + 1) + 43; omega) _
      have hw_v2099_5 : pair1_lt.sl.v2099_5 d L k g2 = Spec.tcol (blkWord fl (wL L).val (2 * t1.val + 1) (64 * (2 * k.val + 1) + 44)) := by
        refine (rv_extract d L g2 (k1_off92 k ⟨2, by decide⟩) (k1_off92_inb k ⟨2, by decide⟩) (by decide) 12 (by decide) (by decide) (by decide)).trans ?_
        exact rv_word d L fl (wL L).val (2 * t1.val + 1) 1 (2 * k.val + 1) 44 (by decide) (by omega) (by decide) g2 hR1 _
          (by rw [k1_off92_eq]; show 128 * k.val + 16 * 2 + 1088 + 12 = 1024 * 1 + 64 * (2 * k.val + 1) + 44; omega) _
      have hw_v2135_5 : pair1_lt.sl.v2135_5 d L k g2 = Spec.tcol (blkWord fl (wL L).val (2 * t1.val + 1) (64 * (2 * k.val + 1) + 45)) := by
        refine (rv_extract d L g2 (k1_off92 k ⟨2, by decide⟩) (k1_off92_inb k ⟨2, by decide⟩) (by decide) 13 (by decide) (by decide) (by decide)).trans ?_
        exact rv_word d L fl (wL L).val (2 * t1.val + 1) 1 (2 * k.val + 1) 45 (by decide) (by omega) (by decide) g2 hR1 _
          (by rw [k1_off92_eq]; show 128 * k.val + 16 * 2 + 1088 + 13 = 1024 * 1 + 64 * (2 * k.val + 1) + 45; omega) _
      have hw_v2171_5 : pair1_lt.sl.v2171_5 d L k g2 = Spec.tcol (blkWord fl (wL L).val (2 * t1.val + 1) (64 * (2 * k.val + 1) + 46)) := by
        refine (rv_extract d L g2 (k1_off92 k ⟨2, by decide⟩) (k1_off92_inb k ⟨2, by decide⟩) (by decide) 14 (by decide) (by decide) (by decide)).trans ?_
        exact rv_word d L fl (wL L).val (2 * t1.val + 1) 1 (2 * k.val + 1) 46 (by decide) (by omega) (by decide) g2 hR1 _
          (by rw [k1_off92_eq]; show 128 * k.val + 16 * 2 + 1088 + 14 = 1024 * 1 + 64 * (2 * k.val + 1) + 46; omega) _
      have hw_v2207_5 : pair1_lt.sl.v2207_5 d L k g2 = Spec.tcol (blkWord fl (wL L).val (2 * t1.val + 1) (64 * (2 * k.val + 1) + 47)) := by
        refine (rv_extract d L g2 (k1_off92 k ⟨2, by decide⟩) (k1_off92_inb k ⟨2, by decide⟩) (by decide) 15 (by decide) (by decide) (by decide)).trans ?_
        exact rv_word d L fl (wL L).val (2 * t1.val + 1) 1 (2 * k.val + 1) 47 (by decide) (by omega) (by decide) g2 hR1 _
          (by rw [k1_off92_eq]; show 128 * k.val + 16 * 2 + 1088 + 15 = 1024 * 1 + 64 * (2 * k.val + 1) + 47; omega) _
      have hw_v1572 : pair1_lt.sl.v1572 d L k g2 = Spec.tcol (blkWord fl (wL L).val (2 * t1.val + 1) (64 * (2 * k.val + 1) + 48)) := by
        refine (rv_extract d L g2 (k1_off109 k) (k1_off109_inb k) (by decide) 0 (by decide) (by decide) (by decide)).trans ?_
        exact rv_word d L fl (wL L).val (2 * t1.val + 1) 1 (2 * k.val + 1) 48 (by decide) (by omega) (by decide) g2 hR1 _
          (by rw [k1_off109_eq]; show 128 * k.val + 1136 + 0 = 1024 * 1 + 64 * (2 * k.val + 1) + 48; omega) _
      have hw_v1606 : pair1_lt.sl.v1606 d L k g2 = Spec.tcol (blkWord fl (wL L).val (2 * t1.val + 1) (64 * (2 * k.val + 1) + 49)) := by
        refine (rv_extract d L g2 (k1_off109 k) (k1_off109_inb k) (by decide) 1 (by decide) (by decide) (by decide)).trans ?_
        exact rv_word d L fl (wL L).val (2 * t1.val + 1) 1 (2 * k.val + 1) 49 (by decide) (by omega) (by decide) g2 hR1 _
          (by rw [k1_off109_eq]; show 128 * k.val + 1136 + 1 = 1024 * 1 + 64 * (2 * k.val + 1) + 49; omega) _
      have s_A0_0 : addf (AccMath.accVec (rowF fl tab (wL L).val (2 * t1.val + 1) (2 * k.val)) (offF fl (wL L).val (2 * t1.val + 1) (2 * k.val)) 0 0) (shapeCast S16 (pair1_lt.sl.v1673 d L tab k r g1 g2 hR hin) hc16) = AccMath.accVec (rowF fl tab (wL L).val (2 * t1.val + 1) (2 * k.val)) (offF fl (wL L).val (2 * t1.val + 1) (2 * k.val)) 0 1 :=
        acc_step d L fl tab (wL L).val (2 * t1.val + 1) (2 * k.val) 0 _ hRA ⟨0, by decide⟩ ⟨0, by decide⟩ _ rfl _ hw_v1667 _ (k1_off66_form ..) _ hc16
      have s_A0_1 : addf (AccMath.accVec (rowF fl tab (wL L).val (2 * t1.val + 1) (2 * k.val)) (offF fl (wL L).val (2 * t1.val + 1) (2 * k.val)) 0 1) (shapeCast S16 (pair1_lt.sl.v1709 d L tab k r g1 g2 hR hin) hc16) = AccMath.accVec (rowF fl tab (wL L).val (2 * t1.val + 1) (2 * k.val)) (offF fl (wL L).val (2 * t1.val + 1) (2 * k.val)) 0 2 :=
        acc_step d L fl tab (wL L).val (2 * t1.val + 1) (2 * k.val) 0 _ hRA ⟨1, by decide⟩ ⟨0, by decide⟩ _ rfl _ hw_v1703 _ (k1_off67_form ..) _ hc16
      have s_A0_2 : addf (AccMath.accVec (rowF fl tab (wL L).val (2 * t1.val + 1) (2 * k.val)) (offF fl (wL L).val (2 * t1.val + 1) (2 * k.val)) 0 2) (shapeCast S16 (pair1_lt.sl.v1745 d L tab k r g1 g2 hR hin) hc16) = AccMath.accVec (rowF fl tab (wL L).val (2 * t1.val + 1) (2 * k.val)) (offF fl (wL L).val (2 * t1.val + 1) (2 * k.val)) 0 3 :=
        acc_step d L fl tab (wL L).val (2 * t1.val + 1) (2 * k.val) 0 _ hRA ⟨2, by decide⟩ ⟨0, by decide⟩ _ rfl _ hw_v1739 _ (k1_off68_form ..) _ hc16
      have s_A0_3 : addf (AccMath.accVec (rowF fl tab (wL L).val (2 * t1.val + 1) (2 * k.val)) (offF fl (wL L).val (2 * t1.val + 1) (2 * k.val)) 0 3) (shapeCast S16 (pair1_lt.sl.v1781 d L tab k r g1 g2 hR hin) hc16) = AccMath.accVec (rowF fl tab (wL L).val (2 * t1.val + 1) (2 * k.val)) (offF fl (wL L).val (2 * t1.val + 1) (2 * k.val)) 0 4 :=
        acc_step d L fl tab (wL L).val (2 * t1.val + 1) (2 * k.val) 0 _ hRA ⟨3, by decide⟩ ⟨0, by decide⟩ _ rfl _ hw_v1775 _ (k1_off69_form ..) _ hc16
      have s_A0_4 : addf (AccMath.accVec (rowF fl tab (wL L).val (2 * t1.val + 1) (2 * k.val)) (offF fl (wL L).val (2 * t1.val + 1) (2 * k.val)) 0 4) (shapeCast S16 (pair1_lt.sl.v1817 d L tab k r g1 g2 hR hin) hc16) = AccMath.accVec (rowF fl tab (wL L).val (2 * t1.val + 1) (2 * k.val)) (offF fl (wL L).val (2 * t1.val + 1) (2 * k.val)) 0 5 :=
        acc_step d L fl tab (wL L).val (2 * t1.val + 1) (2 * k.val) 0 _ hRA ⟨4, by decide⟩ ⟨0, by decide⟩ _ rfl _ hw_v1811 _ (k1_off70_form ..) _ hc16
      have s_A0_5 : addf (AccMath.accVec (rowF fl tab (wL L).val (2 * t1.val + 1) (2 * k.val)) (offF fl (wL L).val (2 * t1.val + 1) (2 * k.val)) 0 5) (shapeCast S16 (pair1_lt.sl.v1853 d L tab k r g1 g2 hR hin) hc16) = AccMath.accVec (rowF fl tab (wL L).val (2 * t1.val + 1) (2 * k.val)) (offF fl (wL L).val (2 * t1.val + 1) (2 * k.val)) 0 6 :=
        acc_step d L fl tab (wL L).val (2 * t1.val + 1) (2 * k.val) 0 _ hRA ⟨5, by decide⟩ ⟨0, by decide⟩ _ rfl _ hw_v1847 _ (k1_off71_form ..) _ hc16
      have s_A0_6 : addf (AccMath.accVec (rowF fl tab (wL L).val (2 * t1.val + 1) (2 * k.val)) (offF fl (wL L).val (2 * t1.val + 1) (2 * k.val)) 0 6) (shapeCast S16 (pair1_lt.sl.v1889 d L tab k r g1 g2 hR hin) hc16) = AccMath.accVec (rowF fl tab (wL L).val (2 * t1.val + 1) (2 * k.val)) (offF fl (wL L).val (2 * t1.val + 1) (2 * k.val)) 0 7 :=
        acc_step d L fl tab (wL L).val (2 * t1.val + 1) (2 * k.val) 0 _ hRA ⟨6, by decide⟩ ⟨0, by decide⟩ _ rfl _ hw_v1883 _ (k1_off72_form ..) _ hc16
      have s_A0_7 : addf (AccMath.accVec (rowF fl tab (wL L).val (2 * t1.val + 1) (2 * k.val)) (offF fl (wL L).val (2 * t1.val + 1) (2 * k.val)) 0 7) (shapeCast S16 (pair1_lt.sl.v1925 d L tab k r g1 g2 hR hin) hc16) = AccMath.accVec (rowF fl tab (wL L).val (2 * t1.val + 1) (2 * k.val)) (offF fl (wL L).val (2 * t1.val + 1) (2 * k.val)) 0 8 :=
        acc_step d L fl tab (wL L).val (2 * t1.val + 1) (2 * k.val) 0 _ hRA ⟨7, by decide⟩ ⟨0, by decide⟩ _ rfl _ hw_v1919 _ (k1_off73_form ..) _ hc16
      have s_A0_8 : addf (AccMath.accVec (rowF fl tab (wL L).val (2 * t1.val + 1) (2 * k.val)) (offF fl (wL L).val (2 * t1.val + 1) (2 * k.val)) 0 8) (shapeCast S16 (pair1_lt.sl.v1961 d L tab k r g1 g2 hR hin) hc16) = AccMath.accVec (rowF fl tab (wL L).val (2 * t1.val + 1) (2 * k.val)) (offF fl (wL L).val (2 * t1.val + 1) (2 * k.val)) 0 9 :=
        acc_step d L fl tab (wL L).val (2 * t1.val + 1) (2 * k.val) 0 _ hRA ⟨8, by decide⟩ ⟨0, by decide⟩ _ rfl _ hw_v1955 _ (k1_off74_form ..) _ hc16
      have s_A0_9 : addf (AccMath.accVec (rowF fl tab (wL L).val (2 * t1.val + 1) (2 * k.val)) (offF fl (wL L).val (2 * t1.val + 1) (2 * k.val)) 0 9) (shapeCast S16 (pair1_lt.sl.v1997 d L tab k r g1 g2 hR hin) hc16) = AccMath.accVec (rowF fl tab (wL L).val (2 * t1.val + 1) (2 * k.val)) (offF fl (wL L).val (2 * t1.val + 1) (2 * k.val)) 0 10 :=
        acc_step d L fl tab (wL L).val (2 * t1.val + 1) (2 * k.val) 0 _ hRA ⟨9, by decide⟩ ⟨0, by decide⟩ _ rfl _ hw_v1991 _ (k1_off75_form ..) _ hc16
      have s_A0_10 : addf (AccMath.accVec (rowF fl tab (wL L).val (2 * t1.val + 1) (2 * k.val)) (offF fl (wL L).val (2 * t1.val + 1) (2 * k.val)) 0 10) (shapeCast S16 (pair1_lt.sl.v2033 d L tab k r g1 g2 hR hin) hc16) = AccMath.accVec (rowF fl tab (wL L).val (2 * t1.val + 1) (2 * k.val)) (offF fl (wL L).val (2 * t1.val + 1) (2 * k.val)) 0 11 :=
        acc_step d L fl tab (wL L).val (2 * t1.val + 1) (2 * k.val) 0 _ hRA ⟨10, by decide⟩ ⟨0, by decide⟩ _ rfl _ hw_v2027 _ (k1_off76_form ..) _ hc16
      have s_A0_11 : addf (AccMath.accVec (rowF fl tab (wL L).val (2 * t1.val + 1) (2 * k.val)) (offF fl (wL L).val (2 * t1.val + 1) (2 * k.val)) 0 11) (shapeCast S16 (pair1_lt.sl.v2069 d L tab k r g1 g2 hR hin) hc16) = AccMath.accVec (rowF fl tab (wL L).val (2 * t1.val + 1) (2 * k.val)) (offF fl (wL L).val (2 * t1.val + 1) (2 * k.val)) 0 12 :=
        acc_step d L fl tab (wL L).val (2 * t1.val + 1) (2 * k.val) 0 _ hRA ⟨11, by decide⟩ ⟨0, by decide⟩ _ rfl _ hw_v2063 _ (k1_off77_form ..) _ hc16
      have s_A0_12 : addf (AccMath.accVec (rowF fl tab (wL L).val (2 * t1.val + 1) (2 * k.val)) (offF fl (wL L).val (2 * t1.val + 1) (2 * k.val)) 0 12) (shapeCast S16 (pair1_lt.sl.v2105 d L tab k r g1 g2 hR hin) hc16) = AccMath.accVec (rowF fl tab (wL L).val (2 * t1.val + 1) (2 * k.val)) (offF fl (wL L).val (2 * t1.val + 1) (2 * k.val)) 0 13 :=
        acc_step d L fl tab (wL L).val (2 * t1.val + 1) (2 * k.val) 0 _ hRA ⟨12, by decide⟩ ⟨0, by decide⟩ _ rfl _ hw_v2099 _ (k1_off78_form ..) _ hc16
      have s_A0_13 : addf (AccMath.accVec (rowF fl tab (wL L).val (2 * t1.val + 1) (2 * k.val)) (offF fl (wL L).val (2 * t1.val + 1) (2 * k.val)) 0 13) (shapeCast S16 (pair1_lt.sl.v2141 d L tab k r g1 g2 hR hin) hc16) = AccMath.accVec (rowF fl tab (wL L).val (2 * t1.val + 1) (2 * k.val)) (offF fl (wL L).val (2 * t1.val + 1) (2 * k.val)) 0 14 :=
        acc_step d L fl tab (wL L).val (2 * t1.val + 1) (2 * k.val) 0 _ hRA ⟨13, by decide⟩ ⟨0, by decide⟩ _ rfl _ hw_v2135 _ (k1_off79_form ..) _ hc16
      have s_A0_14 : addf (AccMath.accVec (rowF fl tab (wL L).val (2 * t1.val + 1) (2 * k.val)) (offF fl (wL L).val (2 * t1.val + 1) (2 * k.val)) 0 14) (shapeCast S16 (pair1_lt.sl.v2177 d L tab k r g1 g2 hR hin) hc16) = AccMath.accVec (rowF fl tab (wL L).val (2 * t1.val + 1) (2 * k.val)) (offF fl (wL L).val (2 * t1.val + 1) (2 * k.val)) 0 15 :=
        acc_step d L fl tab (wL L).val (2 * t1.val + 1) (2 * k.val) 0 _ hRA ⟨14, by decide⟩ ⟨0, by decide⟩ _ rfl _ hw_v2171 _ (k1_off80_form ..) _ hc16
      have s_A0_15 : addf (AccMath.accVec (rowF fl tab (wL L).val (2 * t1.val + 1) (2 * k.val)) (offF fl (wL L).val (2 * t1.val + 1) (2 * k.val)) 0 15) (shapeCast S16 (pair1_lt.sl.v2213 d L tab k r g1 g2 hR hin) hc16) = AccMath.accVec (rowF fl tab (wL L).val (2 * t1.val + 1) (2 * k.val)) (offF fl (wL L).val (2 * t1.val + 1) (2 * k.val)) 0 16 :=
        acc_step d L fl tab (wL L).val (2 * t1.val + 1) (2 * k.val) 0 _ hRA ⟨15, by decide⟩ ⟨0, by decide⟩ _ rfl _ hw_v2207 _ (k1_off81_form ..) _ hc16
      have s_A0_16 : addf (AccMath.accVec (rowF fl tab (wL L).val (2 * t1.val + 1) (2 * k.val)) (offF fl (wL L).val (2 * t1.val + 1) (2 * k.val)) 0 16) (shapeCast S16 (pair1_lt.sl.v1673_1 d L tab k r g1 g2 hR hin) hc16) = AccMath.accVec (rowF fl tab (wL L).val (2 * t1.val + 1) (2 * k.val)) (offF fl (wL L).val (2 * t1.val + 1) (2 * k.val)) 0 17 :=
        acc_step d L fl tab (wL L).val (2 * t1.val + 1) (2 * k.val) 0 _ hRA ⟨16, by decide⟩ ⟨0, by decide⟩ _ rfl _ hw_v1667_1 _ (k1_off66_form ..) _ hc16
      have s_A0_17 : addf (AccMath.accVec (rowF fl tab (wL L).val (2 * t1.val + 1) (2 * k.val)) (offF fl (wL L).val (2 * t1.val + 1) (2 * k.val)) 0 17) (shapeCast S16 (pair1_lt.sl.v1709_1 d L tab k r g1 g2 hR hin) hc16) = AccMath.accVec (rowF fl tab (wL L).val (2 * t1.val + 1) (2 * k.val)) (offF fl (wL L).val (2 * t1.val + 1) (2 * k.val)) 0 18 :=
        acc_step d L fl tab (wL L).val (2 * t1.val + 1) (2 * k.val) 0 _ hRA ⟨17, by decide⟩ ⟨0, by decide⟩ _ rfl _ hw_v1703_1 _ (k1_off67_form ..) _ hc16
      have s_A0_18 : addf (AccMath.accVec (rowF fl tab (wL L).val (2 * t1.val + 1) (2 * k.val)) (offF fl (wL L).val (2 * t1.val + 1) (2 * k.val)) 0 18) (shapeCast S16 (pair1_lt.sl.v1745_1 d L tab k r g1 g2 hR hin) hc16) = AccMath.accVec (rowF fl tab (wL L).val (2 * t1.val + 1) (2 * k.val)) (offF fl (wL L).val (2 * t1.val + 1) (2 * k.val)) 0 19 :=
        acc_step d L fl tab (wL L).val (2 * t1.val + 1) (2 * k.val) 0 _ hRA ⟨18, by decide⟩ ⟨0, by decide⟩ _ rfl _ hw_v1739_1 _ (k1_off68_form ..) _ hc16
      have s_A0_19 : addf (AccMath.accVec (rowF fl tab (wL L).val (2 * t1.val + 1) (2 * k.val)) (offF fl (wL L).val (2 * t1.val + 1) (2 * k.val)) 0 19) (shapeCast S16 (pair1_lt.sl.v1781_1 d L tab k r g1 g2 hR hin) hc16) = AccMath.accVec (rowF fl tab (wL L).val (2 * t1.val + 1) (2 * k.val)) (offF fl (wL L).val (2 * t1.val + 1) (2 * k.val)) 0 20 :=
        acc_step d L fl tab (wL L).val (2 * t1.val + 1) (2 * k.val) 0 _ hRA ⟨19, by decide⟩ ⟨0, by decide⟩ _ rfl _ hw_v1775_1 _ (k1_off69_form ..) _ hc16
      have s_A0_20 : addf (AccMath.accVec (rowF fl tab (wL L).val (2 * t1.val + 1) (2 * k.val)) (offF fl (wL L).val (2 * t1.val + 1) (2 * k.val)) 0 20) (shapeCast S16 (pair1_lt.sl.v1817_1 d L tab k r g1 g2 hR hin) hc16) = AccMath.accVec (rowF fl tab (wL L).val (2 * t1.val + 1) (2 * k.val)) (offF fl (wL L).val (2 * t1.val + 1) (2 * k.val)) 0 21 :=
        acc_step d L fl tab (wL L).val (2 * t1.val + 1) (2 * k.val) 0 _ hRA ⟨20, by decide⟩ ⟨0, by decide⟩ _ rfl _ hw_v1811_1 _ (k1_off70_form ..) _ hc16
      have s_A0_21 : addf (AccMath.accVec (rowF fl tab (wL L).val (2 * t1.val + 1) (2 * k.val)) (offF fl (wL L).val (2 * t1.val + 1) (2 * k.val)) 0 21) (shapeCast S16 (pair1_lt.sl.v1853_1 d L tab k r g1 g2 hR hin) hc16) = AccMath.accVec (rowF fl tab (wL L).val (2 * t1.val + 1) (2 * k.val)) (offF fl (wL L).val (2 * t1.val + 1) (2 * k.val)) 0 22 :=
        acc_step d L fl tab (wL L).val (2 * t1.val + 1) (2 * k.val) 0 _ hRA ⟨21, by decide⟩ ⟨0, by decide⟩ _ rfl _ hw_v1847_1 _ (k1_off71_form ..) _ hc16
      have s_A0_22 : addf (AccMath.accVec (rowF fl tab (wL L).val (2 * t1.val + 1) (2 * k.val)) (offF fl (wL L).val (2 * t1.val + 1) (2 * k.val)) 0 22) (shapeCast S16 (pair1_lt.sl.v1889_1 d L tab k r g1 g2 hR hin) hc16) = AccMath.accVec (rowF fl tab (wL L).val (2 * t1.val + 1) (2 * k.val)) (offF fl (wL L).val (2 * t1.val + 1) (2 * k.val)) 0 23 :=
        acc_step d L fl tab (wL L).val (2 * t1.val + 1) (2 * k.val) 0 _ hRA ⟨22, by decide⟩ ⟨0, by decide⟩ _ rfl _ hw_v1883_1 _ (k1_off72_form ..) _ hc16
      have s_A0_23 : addf (AccMath.accVec (rowF fl tab (wL L).val (2 * t1.val + 1) (2 * k.val)) (offF fl (wL L).val (2 * t1.val + 1) (2 * k.val)) 0 23) (shapeCast S16 (pair1_lt.sl.v1925_1 d L tab k r g1 g2 hR hin) hc16) = AccMath.accVec (rowF fl tab (wL L).val (2 * t1.val + 1) (2 * k.val)) (offF fl (wL L).val (2 * t1.val + 1) (2 * k.val)) 0 24 :=
        acc_step d L fl tab (wL L).val (2 * t1.val + 1) (2 * k.val) 0 _ hRA ⟨23, by decide⟩ ⟨0, by decide⟩ _ rfl _ hw_v1919_1 _ (k1_off73_form ..) _ hc16
      have s_A0_24 : addf (AccMath.accVec (rowF fl tab (wL L).val (2 * t1.val + 1) (2 * k.val)) (offF fl (wL L).val (2 * t1.val + 1) (2 * k.val)) 0 24) (shapeCast S16 (pair1_lt.sl.v1961_1 d L tab k r g1 g2 hR hin) hc16) = AccMath.accVec (rowF fl tab (wL L).val (2 * t1.val + 1) (2 * k.val)) (offF fl (wL L).val (2 * t1.val + 1) (2 * k.val)) 0 25 :=
        acc_step d L fl tab (wL L).val (2 * t1.val + 1) (2 * k.val) 0 _ hRA ⟨24, by decide⟩ ⟨0, by decide⟩ _ rfl _ hw_v1955_1 _ (k1_off74_form ..) _ hc16
      have s_A0_25 : addf (AccMath.accVec (rowF fl tab (wL L).val (2 * t1.val + 1) (2 * k.val)) (offF fl (wL L).val (2 * t1.val + 1) (2 * k.val)) 0 25) (shapeCast S16 (pair1_lt.sl.v1997_1 d L tab k r g1 g2 hR hin) hc16) = AccMath.accVec (rowF fl tab (wL L).val (2 * t1.val + 1) (2 * k.val)) (offF fl (wL L).val (2 * t1.val + 1) (2 * k.val)) 0 26 :=
        acc_step d L fl tab (wL L).val (2 * t1.val + 1) (2 * k.val) 0 _ hRA ⟨25, by decide⟩ ⟨0, by decide⟩ _ rfl _ hw_v1991_1 _ (k1_off75_form ..) _ hc16
      have s_A0_26 : addf (AccMath.accVec (rowF fl tab (wL L).val (2 * t1.val + 1) (2 * k.val)) (offF fl (wL L).val (2 * t1.val + 1) (2 * k.val)) 0 26) (shapeCast S16 (pair1_lt.sl.v2033_1 d L tab k r g1 g2 hR hin) hc16) = AccMath.accVec (rowF fl tab (wL L).val (2 * t1.val + 1) (2 * k.val)) (offF fl (wL L).val (2 * t1.val + 1) (2 * k.val)) 0 27 :=
        acc_step d L fl tab (wL L).val (2 * t1.val + 1) (2 * k.val) 0 _ hRA ⟨26, by decide⟩ ⟨0, by decide⟩ _ rfl _ hw_v2027_1 _ (k1_off76_form ..) _ hc16
      have s_A0_27 : addf (AccMath.accVec (rowF fl tab (wL L).val (2 * t1.val + 1) (2 * k.val)) (offF fl (wL L).val (2 * t1.val + 1) (2 * k.val)) 0 27) (shapeCast S16 (pair1_lt.sl.v2069_1 d L tab k r g1 g2 hR hin) hc16) = AccMath.accVec (rowF fl tab (wL L).val (2 * t1.val + 1) (2 * k.val)) (offF fl (wL L).val (2 * t1.val + 1) (2 * k.val)) 0 28 :=
        acc_step d L fl tab (wL L).val (2 * t1.val + 1) (2 * k.val) 0 _ hRA ⟨27, by decide⟩ ⟨0, by decide⟩ _ rfl _ hw_v2063_1 _ (k1_off77_form ..) _ hc16
      have s_A0_28 : addf (AccMath.accVec (rowF fl tab (wL L).val (2 * t1.val + 1) (2 * k.val)) (offF fl (wL L).val (2 * t1.val + 1) (2 * k.val)) 0 28) (shapeCast S16 (pair1_lt.sl.v2105_1 d L tab k r g1 g2 hR hin) hc16) = AccMath.accVec (rowF fl tab (wL L).val (2 * t1.val + 1) (2 * k.val)) (offF fl (wL L).val (2 * t1.val + 1) (2 * k.val)) 0 29 :=
        acc_step d L fl tab (wL L).val (2 * t1.val + 1) (2 * k.val) 0 _ hRA ⟨28, by decide⟩ ⟨0, by decide⟩ _ rfl _ hw_v2099_1 _ (k1_off78_form ..) _ hc16
      have s_A0_29 : addf (AccMath.accVec (rowF fl tab (wL L).val (2 * t1.val + 1) (2 * k.val)) (offF fl (wL L).val (2 * t1.val + 1) (2 * k.val)) 0 29) (shapeCast S16 (pair1_lt.sl.v2141_1 d L tab k r g1 g2 hR hin) hc16) = AccMath.accVec (rowF fl tab (wL L).val (2 * t1.val + 1) (2 * k.val)) (offF fl (wL L).val (2 * t1.val + 1) (2 * k.val)) 0 30 :=
        acc_step d L fl tab (wL L).val (2 * t1.val + 1) (2 * k.val) 0 _ hRA ⟨29, by decide⟩ ⟨0, by decide⟩ _ rfl _ hw_v2135_1 _ (k1_off79_form ..) _ hc16
      have s_A0_30 : addf (AccMath.accVec (rowF fl tab (wL L).val (2 * t1.val + 1) (2 * k.val)) (offF fl (wL L).val (2 * t1.val + 1) (2 * k.val)) 0 30) (shapeCast S16 (pair1_lt.sl.v2177_1 d L tab k r g1 g2 hR hin) hc16) = AccMath.accVec (rowF fl tab (wL L).val (2 * t1.val + 1) (2 * k.val)) (offF fl (wL L).val (2 * t1.val + 1) (2 * k.val)) 0 31 :=
        acc_step d L fl tab (wL L).val (2 * t1.val + 1) (2 * k.val) 0 _ hRA ⟨30, by decide⟩ ⟨0, by decide⟩ _ rfl _ hw_v2171_1 _ (k1_off80_form ..) _ hc16
      have s_A0_31 : addf (AccMath.accVec (rowF fl tab (wL L).val (2 * t1.val + 1) (2 * k.val)) (offF fl (wL L).val (2 * t1.val + 1) (2 * k.val)) 0 31) (shapeCast S16 (pair1_lt.sl.v2213_1 d L tab k r g1 g2 hR hin) hc16) = AccMath.accVec (rowF fl tab (wL L).val (2 * t1.val + 1) (2 * k.val)) (offF fl (wL L).val (2 * t1.val + 1) (2 * k.val)) 0 32 :=
        acc_step d L fl tab (wL L).val (2 * t1.val + 1) (2 * k.val) 0 _ hRA ⟨31, by decide⟩ ⟨0, by decide⟩ _ rfl _ hw_v2207_1 _ (k1_off81_form ..) _ hc16
      have s_A0_32 : addf (AccMath.accVec (rowF fl tab (wL L).val (2 * t1.val + 1) (2 * k.val)) (offF fl (wL L).val (2 * t1.val + 1) (2 * k.val)) 0 32) (shapeCast S16 (pair1_lt.sl.v1673_2 d L tab k r g1 g2 hR hin) hc16) = AccMath.accVec (rowF fl tab (wL L).val (2 * t1.val + 1) (2 * k.val)) (offF fl (wL L).val (2 * t1.val + 1) (2 * k.val)) 0 33 :=
        acc_step d L fl tab (wL L).val (2 * t1.val + 1) (2 * k.val) 0 _ hRA ⟨32, by decide⟩ ⟨0, by decide⟩ _ rfl _ hw_v1667_2 _ (k1_off66_form ..) _ hc16
      have s_A0_33 : addf (AccMath.accVec (rowF fl tab (wL L).val (2 * t1.val + 1) (2 * k.val)) (offF fl (wL L).val (2 * t1.val + 1) (2 * k.val)) 0 33) (shapeCast S16 (pair1_lt.sl.v1709_2 d L tab k r g1 g2 hR hin) hc16) = AccMath.accVec (rowF fl tab (wL L).val (2 * t1.val + 1) (2 * k.val)) (offF fl (wL L).val (2 * t1.val + 1) (2 * k.val)) 0 34 :=
        acc_step d L fl tab (wL L).val (2 * t1.val + 1) (2 * k.val) 0 _ hRA ⟨33, by decide⟩ ⟨0, by decide⟩ _ rfl _ hw_v1703_2 _ (k1_off67_form ..) _ hc16
      have s_A0_34 : addf (AccMath.accVec (rowF fl tab (wL L).val (2 * t1.val + 1) (2 * k.val)) (offF fl (wL L).val (2 * t1.val + 1) (2 * k.val)) 0 34) (shapeCast S16 (pair1_lt.sl.v1745_2 d L tab k r g1 g2 hR hin) hc16) = AccMath.accVec (rowF fl tab (wL L).val (2 * t1.val + 1) (2 * k.val)) (offF fl (wL L).val (2 * t1.val + 1) (2 * k.val)) 0 35 :=
        acc_step d L fl tab (wL L).val (2 * t1.val + 1) (2 * k.val) 0 _ hRA ⟨34, by decide⟩ ⟨0, by decide⟩ _ rfl _ hw_v1739_2 _ (k1_off68_form ..) _ hc16
      have s_A0_35 : addf (AccMath.accVec (rowF fl tab (wL L).val (2 * t1.val + 1) (2 * k.val)) (offF fl (wL L).val (2 * t1.val + 1) (2 * k.val)) 0 35) (shapeCast S16 (pair1_lt.sl.v1781_2 d L tab k r g1 g2 hR hin) hc16) = AccMath.accVec (rowF fl tab (wL L).val (2 * t1.val + 1) (2 * k.val)) (offF fl (wL L).val (2 * t1.val + 1) (2 * k.val)) 0 36 :=
        acc_step d L fl tab (wL L).val (2 * t1.val + 1) (2 * k.val) 0 _ hRA ⟨35, by decide⟩ ⟨0, by decide⟩ _ rfl _ hw_v1775_2 _ (k1_off69_form ..) _ hc16
      have s_A0_36 : addf (AccMath.accVec (rowF fl tab (wL L).val (2 * t1.val + 1) (2 * k.val)) (offF fl (wL L).val (2 * t1.val + 1) (2 * k.val)) 0 36) (shapeCast S16 (pair1_lt.sl.v1817_2 d L tab k r g1 g2 hR hin) hc16) = AccMath.accVec (rowF fl tab (wL L).val (2 * t1.val + 1) (2 * k.val)) (offF fl (wL L).val (2 * t1.val + 1) (2 * k.val)) 0 37 :=
        acc_step d L fl tab (wL L).val (2 * t1.val + 1) (2 * k.val) 0 _ hRA ⟨36, by decide⟩ ⟨0, by decide⟩ _ rfl _ hw_v1811_2 _ (k1_off70_form ..) _ hc16
      have s_A0_37 : addf (AccMath.accVec (rowF fl tab (wL L).val (2 * t1.val + 1) (2 * k.val)) (offF fl (wL L).val (2 * t1.val + 1) (2 * k.val)) 0 37) (shapeCast S16 (pair1_lt.sl.v1853_2 d L tab k r g1 g2 hR hin) hc16) = AccMath.accVec (rowF fl tab (wL L).val (2 * t1.val + 1) (2 * k.val)) (offF fl (wL L).val (2 * t1.val + 1) (2 * k.val)) 0 38 :=
        acc_step d L fl tab (wL L).val (2 * t1.val + 1) (2 * k.val) 0 _ hRA ⟨37, by decide⟩ ⟨0, by decide⟩ _ rfl _ hw_v1847_2 _ (k1_off71_form ..) _ hc16
      have s_A0_38 : addf (AccMath.accVec (rowF fl tab (wL L).val (2 * t1.val + 1) (2 * k.val)) (offF fl (wL L).val (2 * t1.val + 1) (2 * k.val)) 0 38) (shapeCast S16 (pair1_lt.sl.v1889_2 d L tab k r g1 g2 hR hin) hc16) = AccMath.accVec (rowF fl tab (wL L).val (2 * t1.val + 1) (2 * k.val)) (offF fl (wL L).val (2 * t1.val + 1) (2 * k.val)) 0 39 :=
        acc_step d L fl tab (wL L).val (2 * t1.val + 1) (2 * k.val) 0 _ hRA ⟨38, by decide⟩ ⟨0, by decide⟩ _ rfl _ hw_v1883_2 _ (k1_off72_form ..) _ hc16
      have s_A0_39 : addf (AccMath.accVec (rowF fl tab (wL L).val (2 * t1.val + 1) (2 * k.val)) (offF fl (wL L).val (2 * t1.val + 1) (2 * k.val)) 0 39) (shapeCast S16 (pair1_lt.sl.v1925_2 d L tab k r g1 g2 hR hin) hc16) = AccMath.accVec (rowF fl tab (wL L).val (2 * t1.val + 1) (2 * k.val)) (offF fl (wL L).val (2 * t1.val + 1) (2 * k.val)) 0 40 :=
        acc_step d L fl tab (wL L).val (2 * t1.val + 1) (2 * k.val) 0 _ hRA ⟨39, by decide⟩ ⟨0, by decide⟩ _ rfl _ hw_v1919_2 _ (k1_off73_form ..) _ hc16
      have s_A0_40 : addf (AccMath.accVec (rowF fl tab (wL L).val (2 * t1.val + 1) (2 * k.val)) (offF fl (wL L).val (2 * t1.val + 1) (2 * k.val)) 0 40) (shapeCast S16 (pair1_lt.sl.v1961_2 d L tab k r g1 g2 hR hin) hc16) = AccMath.accVec (rowF fl tab (wL L).val (2 * t1.val + 1) (2 * k.val)) (offF fl (wL L).val (2 * t1.val + 1) (2 * k.val)) 0 41 :=
        acc_step d L fl tab (wL L).val (2 * t1.val + 1) (2 * k.val) 0 _ hRA ⟨40, by decide⟩ ⟨0, by decide⟩ _ rfl _ hw_v1955_2 _ (k1_off74_form ..) _ hc16
      have s_A0_41 : addf (AccMath.accVec (rowF fl tab (wL L).val (2 * t1.val + 1) (2 * k.val)) (offF fl (wL L).val (2 * t1.val + 1) (2 * k.val)) 0 41) (shapeCast S16 (pair1_lt.sl.v1997_2 d L tab k r g1 g2 hR hin) hc16) = AccMath.accVec (rowF fl tab (wL L).val (2 * t1.val + 1) (2 * k.val)) (offF fl (wL L).val (2 * t1.val + 1) (2 * k.val)) 0 42 :=
        acc_step d L fl tab (wL L).val (2 * t1.val + 1) (2 * k.val) 0 _ hRA ⟨41, by decide⟩ ⟨0, by decide⟩ _ rfl _ hw_v1991_2 _ (k1_off75_form ..) _ hc16
      have s_A0_42 : addf (AccMath.accVec (rowF fl tab (wL L).val (2 * t1.val + 1) (2 * k.val)) (offF fl (wL L).val (2 * t1.val + 1) (2 * k.val)) 0 42) (shapeCast S16 (pair1_lt.sl.v2033_2 d L tab k r g1 g2 hR hin) hc16) = AccMath.accVec (rowF fl tab (wL L).val (2 * t1.val + 1) (2 * k.val)) (offF fl (wL L).val (2 * t1.val + 1) (2 * k.val)) 0 43 :=
        acc_step d L fl tab (wL L).val (2 * t1.val + 1) (2 * k.val) 0 _ hRA ⟨42, by decide⟩ ⟨0, by decide⟩ _ rfl _ hw_v2027_2 _ (k1_off76_form ..) _ hc16
      have s_A0_43 : addf (AccMath.accVec (rowF fl tab (wL L).val (2 * t1.val + 1) (2 * k.val)) (offF fl (wL L).val (2 * t1.val + 1) (2 * k.val)) 0 43) (shapeCast S16 (pair1_lt.sl.v2069_2 d L tab k r g1 g2 hR hin) hc16) = AccMath.accVec (rowF fl tab (wL L).val (2 * t1.val + 1) (2 * k.val)) (offF fl (wL L).val (2 * t1.val + 1) (2 * k.val)) 0 44 :=
        acc_step d L fl tab (wL L).val (2 * t1.val + 1) (2 * k.val) 0 _ hRA ⟨43, by decide⟩ ⟨0, by decide⟩ _ rfl _ hw_v2063_2 _ (k1_off77_form ..) _ hc16
      have s_A0_44 : addf (AccMath.accVec (rowF fl tab (wL L).val (2 * t1.val + 1) (2 * k.val)) (offF fl (wL L).val (2 * t1.val + 1) (2 * k.val)) 0 44) (shapeCast S16 (pair1_lt.sl.v2105_2 d L tab k r g1 g2 hR hin) hc16) = AccMath.accVec (rowF fl tab (wL L).val (2 * t1.val + 1) (2 * k.val)) (offF fl (wL L).val (2 * t1.val + 1) (2 * k.val)) 0 45 :=
        acc_step d L fl tab (wL L).val (2 * t1.val + 1) (2 * k.val) 0 _ hRA ⟨44, by decide⟩ ⟨0, by decide⟩ _ rfl _ hw_v2099_2 _ (k1_off78_form ..) _ hc16
      have s_A0_45 : addf (AccMath.accVec (rowF fl tab (wL L).val (2 * t1.val + 1) (2 * k.val)) (offF fl (wL L).val (2 * t1.val + 1) (2 * k.val)) 0 45) (shapeCast S16 (pair1_lt.sl.v2141_2 d L tab k r g1 g2 hR hin) hc16) = AccMath.accVec (rowF fl tab (wL L).val (2 * t1.val + 1) (2 * k.val)) (offF fl (wL L).val (2 * t1.val + 1) (2 * k.val)) 0 46 :=
        acc_step d L fl tab (wL L).val (2 * t1.val + 1) (2 * k.val) 0 _ hRA ⟨45, by decide⟩ ⟨0, by decide⟩ _ rfl _ hw_v2135_2 _ (k1_off79_form ..) _ hc16
      have s_A0_46 : addf (AccMath.accVec (rowF fl tab (wL L).val (2 * t1.val + 1) (2 * k.val)) (offF fl (wL L).val (2 * t1.val + 1) (2 * k.val)) 0 46) (shapeCast S16 (pair1_lt.sl.v2177_2 d L tab k r g1 g2 hR hin) hc16) = AccMath.accVec (rowF fl tab (wL L).val (2 * t1.val + 1) (2 * k.val)) (offF fl (wL L).val (2 * t1.val + 1) (2 * k.val)) 0 47 :=
        acc_step d L fl tab (wL L).val (2 * t1.val + 1) (2 * k.val) 0 _ hRA ⟨46, by decide⟩ ⟨0, by decide⟩ _ rfl _ hw_v2171_2 _ (k1_off80_form ..) _ hc16
      have s_A0_47 : addf (AccMath.accVec (rowF fl tab (wL L).val (2 * t1.val + 1) (2 * k.val)) (offF fl (wL L).val (2 * t1.val + 1) (2 * k.val)) 0 47) (shapeCast S16 (pair1_lt.sl.v2213_2 d L tab k r g1 g2 hR hin) hc16) = AccMath.accVec (rowF fl tab (wL L).val (2 * t1.val + 1) (2 * k.val)) (offF fl (wL L).val (2 * t1.val + 1) (2 * k.val)) 0 48 :=
        acc_step d L fl tab (wL L).val (2 * t1.val + 1) (2 * k.val) 0 _ hRA ⟨47, by decide⟩ ⟨0, by decide⟩ _ rfl _ hw_v2207_2 _ (k1_off81_form ..) _ hc16
      have s_A0_48 : addf (AccMath.accVec (rowF fl tab (wL L).val (2 * t1.val + 1) (2 * k.val)) (offF fl (wL L).val (2 * t1.val + 1) (2 * k.val)) 0 48) (shapeCast S16 (pair1_lt.sl.v1462 d L tab k r g1 g2 hR hin) hc16) = AccMath.accVec (rowF fl tab (wL L).val (2 * t1.val + 1) (2 * k.val)) (offF fl (wL L).val (2 * t1.val + 1) (2 * k.val)) 0 49 :=
        acc_step d L fl tab (wL L).val (2 * t1.val + 1) (2 * k.val) 0 _ hRA ⟨48, by decide⟩ ⟨0, by decide⟩ _ rfl _ hw_v1456 _ (k1_off83_form ..) _ hc16
      have s_A0_49 : addf (AccMath.accVec (rowF fl tab (wL L).val (2 * t1.val + 1) (2 * k.val)) (offF fl (wL L).val (2 * t1.val + 1) (2 * k.val)) 0 49) (shapeCast S16 (pair1_lt.sl.v1496 d L tab k r g1 g2 hR hin) hc16) = AccMath.accVec (rowF fl tab (wL L).val (2 * t1.val + 1) (2 * k.val)) (offF fl (wL L).val (2 * t1.val + 1) (2 * k.val)) 0 50 :=
        acc_step d L fl tab (wL L).val (2 * t1.val + 1) (2 * k.val) 0 _ hRA ⟨49, by decide⟩ ⟨0, by decide⟩ _ rfl _ hw_v1490 _ (k1_off84_form ..) _ hc16
      have hP_A0 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val)) (offF fl (wL L).val (2 * t1.val + 1) (2 * k.val)) 0 0) (shapeCast S16 (pair1_lt.sl.v1673 d L tab k r g1 g2 hR hin) hc16)) (shapeCast S16 (pair1_lt.sl.v1709 d L tab k r g1 g2 hR hin) hc16)) (shapeCast S16 (pair1_lt.sl.v1745 d L tab k r g1 g2 hR hin) hc16)) (shapeCast S16 (pair1_lt.sl.v1781 d L tab k r g1 g2 hR hin) hc16)) (shapeCast S16 (pair1_lt.sl.v1817 d L tab k r g1 g2 hR hin) hc16)) (shapeCast S16 (pair1_lt.sl.v1853 d L tab k r g1 g2 hR hin) hc16)) (shapeCast S16 (pair1_lt.sl.v1889 d L tab k r g1 g2 hR hin) hc16)) (shapeCast S16 (pair1_lt.sl.v1925 d L tab k r g1 g2 hR hin) hc16)) (shapeCast S16 (pair1_lt.sl.v1961 d L tab k r g1 g2 hR hin) hc16)) (shapeCast S16 (pair1_lt.sl.v1997 d L tab k r g1 g2 hR hin) hc16)) (shapeCast S16 (pair1_lt.sl.v2033 d L tab k r g1 g2 hR hin) hc16)) (shapeCast S16 (pair1_lt.sl.v2069 d L tab k r g1 g2 hR hin) hc16)) (shapeCast S16 (pair1_lt.sl.v2105 d L tab k r g1 g2 hR hin) hc16)) (shapeCast S16 (pair1_lt.sl.v2141 d L tab k r g1 g2 hR hin) hc16)) (shapeCast S16 (pair1_lt.sl.v2177 d L tab k r g1 g2 hR hin) hc16)) (shapeCast S16 (pair1_lt.sl.v2213 d L tab k r g1 g2 hR hin) hc16)) (shapeCast S16 (pair1_lt.sl.v1673_1 d L tab k r g1 g2 hR hin) hc16)) (shapeCast S16 (pair1_lt.sl.v1709_1 d L tab k r g1 g2 hR hin) hc16)) (shapeCast S16 (pair1_lt.sl.v1745_1 d L tab k r g1 g2 hR hin) hc16)) (shapeCast S16 (pair1_lt.sl.v1781_1 d L tab k r g1 g2 hR hin) hc16)) (shapeCast S16 (pair1_lt.sl.v1817_1 d L tab k r g1 g2 hR hin) hc16)) (shapeCast S16 (pair1_lt.sl.v1853_1 d L tab k r g1 g2 hR hin) hc16)) (shapeCast S16 (pair1_lt.sl.v1889_1 d L tab k r g1 g2 hR hin) hc16)) (shapeCast S16 (pair1_lt.sl.v1925_1 d L tab k r g1 g2 hR hin) hc16)) (shapeCast S16 (pair1_lt.sl.v1961_1 d L tab k r g1 g2 hR hin) hc16)) (shapeCast S16 (pair1_lt.sl.v1997_1 d L tab k r g1 g2 hR hin) hc16)) (shapeCast S16 (pair1_lt.sl.v2033_1 d L tab k r g1 g2 hR hin) hc16)) (shapeCast S16 (pair1_lt.sl.v2069_1 d L tab k r g1 g2 hR hin) hc16)) (shapeCast S16 (pair1_lt.sl.v2105_1 d L tab k r g1 g2 hR hin) hc16)) (shapeCast S16 (pair1_lt.sl.v2141_1 d L tab k r g1 g2 hR hin) hc16)) (shapeCast S16 (pair1_lt.sl.v2177_1 d L tab k r g1 g2 hR hin) hc16)) (shapeCast S16 (pair1_lt.sl.v2213_1 d L tab k r g1 g2 hR hin) hc16)) (shapeCast S16 (pair1_lt.sl.v1673_2 d L tab k r g1 g2 hR hin) hc16)) (shapeCast S16 (pair1_lt.sl.v1709_2 d L tab k r g1 g2 hR hin) hc16)) (shapeCast S16 (pair1_lt.sl.v1745_2 d L tab k r g1 g2 hR hin) hc16)) (shapeCast S16 (pair1_lt.sl.v1781_2 d L tab k r g1 g2 hR hin) hc16)) (shapeCast S16 (pair1_lt.sl.v1817_2 d L tab k r g1 g2 hR hin) hc16)) (shapeCast S16 (pair1_lt.sl.v1853_2 d L tab k r g1 g2 hR hin) hc16)) (shapeCast S16 (pair1_lt.sl.v1889_2 d L tab k r g1 g2 hR hin) hc16)) (shapeCast S16 (pair1_lt.sl.v1925_2 d L tab k r g1 g2 hR hin) hc16)) (shapeCast S16 (pair1_lt.sl.v1961_2 d L tab k r g1 g2 hR hin) hc16)) (shapeCast S16 (pair1_lt.sl.v1997_2 d L tab k r g1 g2 hR hin) hc16)) (shapeCast S16 (pair1_lt.sl.v2033_2 d L tab k r g1 g2 hR hin) hc16)) (shapeCast S16 (pair1_lt.sl.v2069_2 d L tab k r g1 g2 hR hin) hc16)) (shapeCast S16 (pair1_lt.sl.v2105_2 d L tab k r g1 g2 hR hin) hc16)) (shapeCast S16 (pair1_lt.sl.v2141_2 d L tab k r g1 g2 hR hin) hc16)) (shapeCast S16 (pair1_lt.sl.v2177_2 d L tab k r g1 g2 hR hin) hc16)) (shapeCast S16 (pair1_lt.sl.v2213_2 d L tab k r g1 g2 hR hin) hc16)) (shapeCast S16 (pair1_lt.sl.v1462 d L tab k r g1 g2 hR hin) hc16)) (shapeCast S16 (pair1_lt.sl.v1496 d L tab k r g1 g2 hR hin) hc16)) hc1 x = Spec.bagPartial fl tab (128 * (wL L).val + 16 * (2 * t1.val + 1) + (2 * k.val)) (16 * 0 + (x 2).val) 50 := fun x => by
        rw [s_A0_0, s_A0_1, s_A0_2, s_A0_3, s_A0_4, s_A0_5, s_A0_6, s_A0_7, s_A0_8, s_A0_9, s_A0_10, s_A0_11, s_A0_12, s_A0_13, s_A0_14, s_A0_15, s_A0_16, s_A0_17, s_A0_18, s_A0_19, s_A0_20, s_A0_21, s_A0_22, s_A0_23, s_A0_24, s_A0_25, s_A0_26, s_A0_27, s_A0_28, s_A0_29, s_A0_30, s_A0_31, s_A0_32, s_A0_33, s_A0_34, s_A0_35, s_A0_36, s_A0_37, s_A0_38, s_A0_39, s_A0_40, s_A0_41, s_A0_42, s_A0_43, s_A0_44, s_A0_45, s_A0_46, s_A0_47, s_A0_48, s_A0_49]
        exact payload_ok fl tab (wL L).val (2 * t1.val + 1) (2 * k.val) ⟨0, by decide⟩ hc1 x
      have s_A1_0 : addf (AccMath.accVec (rowF fl tab (wL L).val (2 * t1.val + 1) (2 * k.val)) (offF fl (wL L).val (2 * t1.val + 1) (2 * k.val)) 1 0) (shapeCast S16 (pair1_lt.sl.v1681 d L tab k r g1 g2 hR hin) hc16) = AccMath.accVec (rowF fl tab (wL L).val (2 * t1.val + 1) (2 * k.val)) (offF fl (wL L).val (2 * t1.val + 1) (2 * k.val)) 1 1 :=
        acc_step d L fl tab (wL L).val (2 * t1.val + 1) (2 * k.val) 0 _ hRA ⟨0, by decide⟩ ⟨1, by decide⟩ _ rfl _ hw_v1667 _ (k1_off66_form ..) _ hc16
      have s_A1_1 : addf (AccMath.accVec (rowF fl tab (wL L).val (2 * t1.val + 1) (2 * k.val)) (offF fl (wL L).val (2 * t1.val + 1) (2 * k.val)) 1 1) (shapeCast S16 (pair1_lt.sl.v1717 d L tab k r g1 g2 hR hin) hc16) = AccMath.accVec (rowF fl tab (wL L).val (2 * t1.val + 1) (2 * k.val)) (offF fl (wL L).val (2 * t1.val + 1) (2 * k.val)) 1 2 :=
        acc_step d L fl tab (wL L).val (2 * t1.val + 1) (2 * k.val) 0 _ hRA ⟨1, by decide⟩ ⟨1, by decide⟩ _ rfl _ hw_v1703 _ (k1_off67_form ..) _ hc16
      have s_A1_2 : addf (AccMath.accVec (rowF fl tab (wL L).val (2 * t1.val + 1) (2 * k.val)) (offF fl (wL L).val (2 * t1.val + 1) (2 * k.val)) 1 2) (shapeCast S16 (pair1_lt.sl.v1753 d L tab k r g1 g2 hR hin) hc16) = AccMath.accVec (rowF fl tab (wL L).val (2 * t1.val + 1) (2 * k.val)) (offF fl (wL L).val (2 * t1.val + 1) (2 * k.val)) 1 3 :=
        acc_step d L fl tab (wL L).val (2 * t1.val + 1) (2 * k.val) 0 _ hRA ⟨2, by decide⟩ ⟨1, by decide⟩ _ rfl _ hw_v1739 _ (k1_off68_form ..) _ hc16
      have s_A1_3 : addf (AccMath.accVec (rowF fl tab (wL L).val (2 * t1.val + 1) (2 * k.val)) (offF fl (wL L).val (2 * t1.val + 1) (2 * k.val)) 1 3) (shapeCast S16 (pair1_lt.sl.v1789 d L tab k r g1 g2 hR hin) hc16) = AccMath.accVec (rowF fl tab (wL L).val (2 * t1.val + 1) (2 * k.val)) (offF fl (wL L).val (2 * t1.val + 1) (2 * k.val)) 1 4 :=
        acc_step d L fl tab (wL L).val (2 * t1.val + 1) (2 * k.val) 0 _ hRA ⟨3, by decide⟩ ⟨1, by decide⟩ _ rfl _ hw_v1775 _ (k1_off69_form ..) _ hc16
      have s_A1_4 : addf (AccMath.accVec (rowF fl tab (wL L).val (2 * t1.val + 1) (2 * k.val)) (offF fl (wL L).val (2 * t1.val + 1) (2 * k.val)) 1 4) (shapeCast S16 (pair1_lt.sl.v1825 d L tab k r g1 g2 hR hin) hc16) = AccMath.accVec (rowF fl tab (wL L).val (2 * t1.val + 1) (2 * k.val)) (offF fl (wL L).val (2 * t1.val + 1) (2 * k.val)) 1 5 :=
        acc_step d L fl tab (wL L).val (2 * t1.val + 1) (2 * k.val) 0 _ hRA ⟨4, by decide⟩ ⟨1, by decide⟩ _ rfl _ hw_v1811 _ (k1_off70_form ..) _ hc16
      have s_A1_5 : addf (AccMath.accVec (rowF fl tab (wL L).val (2 * t1.val + 1) (2 * k.val)) (offF fl (wL L).val (2 * t1.val + 1) (2 * k.val)) 1 5) (shapeCast S16 (pair1_lt.sl.v1861 d L tab k r g1 g2 hR hin) hc16) = AccMath.accVec (rowF fl tab (wL L).val (2 * t1.val + 1) (2 * k.val)) (offF fl (wL L).val (2 * t1.val + 1) (2 * k.val)) 1 6 :=
        acc_step d L fl tab (wL L).val (2 * t1.val + 1) (2 * k.val) 0 _ hRA ⟨5, by decide⟩ ⟨1, by decide⟩ _ rfl _ hw_v1847 _ (k1_off71_form ..) _ hc16
      have s_A1_6 : addf (AccMath.accVec (rowF fl tab (wL L).val (2 * t1.val + 1) (2 * k.val)) (offF fl (wL L).val (2 * t1.val + 1) (2 * k.val)) 1 6) (shapeCast S16 (pair1_lt.sl.v1897 d L tab k r g1 g2 hR hin) hc16) = AccMath.accVec (rowF fl tab (wL L).val (2 * t1.val + 1) (2 * k.val)) (offF fl (wL L).val (2 * t1.val + 1) (2 * k.val)) 1 7 :=
        acc_step d L fl tab (wL L).val (2 * t1.val + 1) (2 * k.val) 0 _ hRA ⟨6, by decide⟩ ⟨1, by decide⟩ _ rfl _ hw_v1883 _ (k1_off72_form ..) _ hc16
      have s_A1_7 : addf (AccMath.accVec (rowF fl tab (wL L).val (2 * t1.val + 1) (2 * k.val)) (offF fl (wL L).val (2 * t1.val + 1) (2 * k.val)) 1 7) (shapeCast S16 (pair1_lt.sl.v1933 d L tab k r g1 g2 hR hin) hc16) = AccMath.accVec (rowF fl tab (wL L).val (2 * t1.val + 1) (2 * k.val)) (offF fl (wL L).val (2 * t1.val + 1) (2 * k.val)) 1 8 :=
        acc_step d L fl tab (wL L).val (2 * t1.val + 1) (2 * k.val) 0 _ hRA ⟨7, by decide⟩ ⟨1, by decide⟩ _ rfl _ hw_v1919 _ (k1_off73_form ..) _ hc16
      have s_A1_8 : addf (AccMath.accVec (rowF fl tab (wL L).val (2 * t1.val + 1) (2 * k.val)) (offF fl (wL L).val (2 * t1.val + 1) (2 * k.val)) 1 8) (shapeCast S16 (pair1_lt.sl.v1969 d L tab k r g1 g2 hR hin) hc16) = AccMath.accVec (rowF fl tab (wL L).val (2 * t1.val + 1) (2 * k.val)) (offF fl (wL L).val (2 * t1.val + 1) (2 * k.val)) 1 9 :=
        acc_step d L fl tab (wL L).val (2 * t1.val + 1) (2 * k.val) 0 _ hRA ⟨8, by decide⟩ ⟨1, by decide⟩ _ rfl _ hw_v1955 _ (k1_off74_form ..) _ hc16
      have s_A1_9 : addf (AccMath.accVec (rowF fl tab (wL L).val (2 * t1.val + 1) (2 * k.val)) (offF fl (wL L).val (2 * t1.val + 1) (2 * k.val)) 1 9) (shapeCast S16 (pair1_lt.sl.v2005 d L tab k r g1 g2 hR hin) hc16) = AccMath.accVec (rowF fl tab (wL L).val (2 * t1.val + 1) (2 * k.val)) (offF fl (wL L).val (2 * t1.val + 1) (2 * k.val)) 1 10 :=
        acc_step d L fl tab (wL L).val (2 * t1.val + 1) (2 * k.val) 0 _ hRA ⟨9, by decide⟩ ⟨1, by decide⟩ _ rfl _ hw_v1991 _ (k1_off75_form ..) _ hc16
      have s_A1_10 : addf (AccMath.accVec (rowF fl tab (wL L).val (2 * t1.val + 1) (2 * k.val)) (offF fl (wL L).val (2 * t1.val + 1) (2 * k.val)) 1 10) (shapeCast S16 (pair1_lt.sl.v2041 d L tab k r g1 g2 hR hin) hc16) = AccMath.accVec (rowF fl tab (wL L).val (2 * t1.val + 1) (2 * k.val)) (offF fl (wL L).val (2 * t1.val + 1) (2 * k.val)) 1 11 :=
        acc_step d L fl tab (wL L).val (2 * t1.val + 1) (2 * k.val) 0 _ hRA ⟨10, by decide⟩ ⟨1, by decide⟩ _ rfl _ hw_v2027 _ (k1_off76_form ..) _ hc16
      have s_A1_11 : addf (AccMath.accVec (rowF fl tab (wL L).val (2 * t1.val + 1) (2 * k.val)) (offF fl (wL L).val (2 * t1.val + 1) (2 * k.val)) 1 11) (shapeCast S16 (pair1_lt.sl.v2077 d L tab k r g1 g2 hR hin) hc16) = AccMath.accVec (rowF fl tab (wL L).val (2 * t1.val + 1) (2 * k.val)) (offF fl (wL L).val (2 * t1.val + 1) (2 * k.val)) 1 12 :=
        acc_step d L fl tab (wL L).val (2 * t1.val + 1) (2 * k.val) 0 _ hRA ⟨11, by decide⟩ ⟨1, by decide⟩ _ rfl _ hw_v2063 _ (k1_off77_form ..) _ hc16
      have s_A1_12 : addf (AccMath.accVec (rowF fl tab (wL L).val (2 * t1.val + 1) (2 * k.val)) (offF fl (wL L).val (2 * t1.val + 1) (2 * k.val)) 1 12) (shapeCast S16 (pair1_lt.sl.v2113 d L tab k r g1 g2 hR hin) hc16) = AccMath.accVec (rowF fl tab (wL L).val (2 * t1.val + 1) (2 * k.val)) (offF fl (wL L).val (2 * t1.val + 1) (2 * k.val)) 1 13 :=
        acc_step d L fl tab (wL L).val (2 * t1.val + 1) (2 * k.val) 0 _ hRA ⟨12, by decide⟩ ⟨1, by decide⟩ _ rfl _ hw_v2099 _ (k1_off78_form ..) _ hc16
      have s_A1_13 : addf (AccMath.accVec (rowF fl tab (wL L).val (2 * t1.val + 1) (2 * k.val)) (offF fl (wL L).val (2 * t1.val + 1) (2 * k.val)) 1 13) (shapeCast S16 (pair1_lt.sl.v2149 d L tab k r g1 g2 hR hin) hc16) = AccMath.accVec (rowF fl tab (wL L).val (2 * t1.val + 1) (2 * k.val)) (offF fl (wL L).val (2 * t1.val + 1) (2 * k.val)) 1 14 :=
        acc_step d L fl tab (wL L).val (2 * t1.val + 1) (2 * k.val) 0 _ hRA ⟨13, by decide⟩ ⟨1, by decide⟩ _ rfl _ hw_v2135 _ (k1_off79_form ..) _ hc16
      have s_A1_14 : addf (AccMath.accVec (rowF fl tab (wL L).val (2 * t1.val + 1) (2 * k.val)) (offF fl (wL L).val (2 * t1.val + 1) (2 * k.val)) 1 14) (shapeCast S16 (pair1_lt.sl.v2185 d L tab k r g1 g2 hR hin) hc16) = AccMath.accVec (rowF fl tab (wL L).val (2 * t1.val + 1) (2 * k.val)) (offF fl (wL L).val (2 * t1.val + 1) (2 * k.val)) 1 15 :=
        acc_step d L fl tab (wL L).val (2 * t1.val + 1) (2 * k.val) 0 _ hRA ⟨14, by decide⟩ ⟨1, by decide⟩ _ rfl _ hw_v2171 _ (k1_off80_form ..) _ hc16
      have s_A1_15 : addf (AccMath.accVec (rowF fl tab (wL L).val (2 * t1.val + 1) (2 * k.val)) (offF fl (wL L).val (2 * t1.val + 1) (2 * k.val)) 1 15) (shapeCast S16 (pair1_lt.sl.v2221 d L tab k r g1 g2 hR hin) hc16) = AccMath.accVec (rowF fl tab (wL L).val (2 * t1.val + 1) (2 * k.val)) (offF fl (wL L).val (2 * t1.val + 1) (2 * k.val)) 1 16 :=
        acc_step d L fl tab (wL L).val (2 * t1.val + 1) (2 * k.val) 0 _ hRA ⟨15, by decide⟩ ⟨1, by decide⟩ _ rfl _ hw_v2207 _ (k1_off81_form ..) _ hc16
      have s_A1_16 : addf (AccMath.accVec (rowF fl tab (wL L).val (2 * t1.val + 1) (2 * k.val)) (offF fl (wL L).val (2 * t1.val + 1) (2 * k.val)) 1 16) (shapeCast S16 (pair1_lt.sl.v1681_1 d L tab k r g1 g2 hR hin) hc16) = AccMath.accVec (rowF fl tab (wL L).val (2 * t1.val + 1) (2 * k.val)) (offF fl (wL L).val (2 * t1.val + 1) (2 * k.val)) 1 17 :=
        acc_step d L fl tab (wL L).val (2 * t1.val + 1) (2 * k.val) 0 _ hRA ⟨16, by decide⟩ ⟨1, by decide⟩ _ rfl _ hw_v1667_1 _ (k1_off66_form ..) _ hc16
      have s_A1_17 : addf (AccMath.accVec (rowF fl tab (wL L).val (2 * t1.val + 1) (2 * k.val)) (offF fl (wL L).val (2 * t1.val + 1) (2 * k.val)) 1 17) (shapeCast S16 (pair1_lt.sl.v1717_1 d L tab k r g1 g2 hR hin) hc16) = AccMath.accVec (rowF fl tab (wL L).val (2 * t1.val + 1) (2 * k.val)) (offF fl (wL L).val (2 * t1.val + 1) (2 * k.val)) 1 18 :=
        acc_step d L fl tab (wL L).val (2 * t1.val + 1) (2 * k.val) 0 _ hRA ⟨17, by decide⟩ ⟨1, by decide⟩ _ rfl _ hw_v1703_1 _ (k1_off67_form ..) _ hc16
      have s_A1_18 : addf (AccMath.accVec (rowF fl tab (wL L).val (2 * t1.val + 1) (2 * k.val)) (offF fl (wL L).val (2 * t1.val + 1) (2 * k.val)) 1 18) (shapeCast S16 (pair1_lt.sl.v1753_1 d L tab k r g1 g2 hR hin) hc16) = AccMath.accVec (rowF fl tab (wL L).val (2 * t1.val + 1) (2 * k.val)) (offF fl (wL L).val (2 * t1.val + 1) (2 * k.val)) 1 19 :=
        acc_step d L fl tab (wL L).val (2 * t1.val + 1) (2 * k.val) 0 _ hRA ⟨18, by decide⟩ ⟨1, by decide⟩ _ rfl _ hw_v1739_1 _ (k1_off68_form ..) _ hc16
      have s_A1_19 : addf (AccMath.accVec (rowF fl tab (wL L).val (2 * t1.val + 1) (2 * k.val)) (offF fl (wL L).val (2 * t1.val + 1) (2 * k.val)) 1 19) (shapeCast S16 (pair1_lt.sl.v1789_1 d L tab k r g1 g2 hR hin) hc16) = AccMath.accVec (rowF fl tab (wL L).val (2 * t1.val + 1) (2 * k.val)) (offF fl (wL L).val (2 * t1.val + 1) (2 * k.val)) 1 20 :=
        acc_step d L fl tab (wL L).val (2 * t1.val + 1) (2 * k.val) 0 _ hRA ⟨19, by decide⟩ ⟨1, by decide⟩ _ rfl _ hw_v1775_1 _ (k1_off69_form ..) _ hc16
      have s_A1_20 : addf (AccMath.accVec (rowF fl tab (wL L).val (2 * t1.val + 1) (2 * k.val)) (offF fl (wL L).val (2 * t1.val + 1) (2 * k.val)) 1 20) (shapeCast S16 (pair1_lt.sl.v1825_1 d L tab k r g1 g2 hR hin) hc16) = AccMath.accVec (rowF fl tab (wL L).val (2 * t1.val + 1) (2 * k.val)) (offF fl (wL L).val (2 * t1.val + 1) (2 * k.val)) 1 21 :=
        acc_step d L fl tab (wL L).val (2 * t1.val + 1) (2 * k.val) 0 _ hRA ⟨20, by decide⟩ ⟨1, by decide⟩ _ rfl _ hw_v1811_1 _ (k1_off70_form ..) _ hc16
      have s_A1_21 : addf (AccMath.accVec (rowF fl tab (wL L).val (2 * t1.val + 1) (2 * k.val)) (offF fl (wL L).val (2 * t1.val + 1) (2 * k.val)) 1 21) (shapeCast S16 (pair1_lt.sl.v1861_1 d L tab k r g1 g2 hR hin) hc16) = AccMath.accVec (rowF fl tab (wL L).val (2 * t1.val + 1) (2 * k.val)) (offF fl (wL L).val (2 * t1.val + 1) (2 * k.val)) 1 22 :=
        acc_step d L fl tab (wL L).val (2 * t1.val + 1) (2 * k.val) 0 _ hRA ⟨21, by decide⟩ ⟨1, by decide⟩ _ rfl _ hw_v1847_1 _ (k1_off71_form ..) _ hc16
      have s_A1_22 : addf (AccMath.accVec (rowF fl tab (wL L).val (2 * t1.val + 1) (2 * k.val)) (offF fl (wL L).val (2 * t1.val + 1) (2 * k.val)) 1 22) (shapeCast S16 (pair1_lt.sl.v1897_1 d L tab k r g1 g2 hR hin) hc16) = AccMath.accVec (rowF fl tab (wL L).val (2 * t1.val + 1) (2 * k.val)) (offF fl (wL L).val (2 * t1.val + 1) (2 * k.val)) 1 23 :=
        acc_step d L fl tab (wL L).val (2 * t1.val + 1) (2 * k.val) 0 _ hRA ⟨22, by decide⟩ ⟨1, by decide⟩ _ rfl _ hw_v1883_1 _ (k1_off72_form ..) _ hc16
      have s_A1_23 : addf (AccMath.accVec (rowF fl tab (wL L).val (2 * t1.val + 1) (2 * k.val)) (offF fl (wL L).val (2 * t1.val + 1) (2 * k.val)) 1 23) (shapeCast S16 (pair1_lt.sl.v1933_1 d L tab k r g1 g2 hR hin) hc16) = AccMath.accVec (rowF fl tab (wL L).val (2 * t1.val + 1) (2 * k.val)) (offF fl (wL L).val (2 * t1.val + 1) (2 * k.val)) 1 24 :=
        acc_step d L fl tab (wL L).val (2 * t1.val + 1) (2 * k.val) 0 _ hRA ⟨23, by decide⟩ ⟨1, by decide⟩ _ rfl _ hw_v1919_1 _ (k1_off73_form ..) _ hc16
      have s_A1_24 : addf (AccMath.accVec (rowF fl tab (wL L).val (2 * t1.val + 1) (2 * k.val)) (offF fl (wL L).val (2 * t1.val + 1) (2 * k.val)) 1 24) (shapeCast S16 (pair1_lt.sl.v1969_1 d L tab k r g1 g2 hR hin) hc16) = AccMath.accVec (rowF fl tab (wL L).val (2 * t1.val + 1) (2 * k.val)) (offF fl (wL L).val (2 * t1.val + 1) (2 * k.val)) 1 25 :=
        acc_step d L fl tab (wL L).val (2 * t1.val + 1) (2 * k.val) 0 _ hRA ⟨24, by decide⟩ ⟨1, by decide⟩ _ rfl _ hw_v1955_1 _ (k1_off74_form ..) _ hc16
      have s_A1_25 : addf (AccMath.accVec (rowF fl tab (wL L).val (2 * t1.val + 1) (2 * k.val)) (offF fl (wL L).val (2 * t1.val + 1) (2 * k.val)) 1 25) (shapeCast S16 (pair1_lt.sl.v2005_1 d L tab k r g1 g2 hR hin) hc16) = AccMath.accVec (rowF fl tab (wL L).val (2 * t1.val + 1) (2 * k.val)) (offF fl (wL L).val (2 * t1.val + 1) (2 * k.val)) 1 26 :=
        acc_step d L fl tab (wL L).val (2 * t1.val + 1) (2 * k.val) 0 _ hRA ⟨25, by decide⟩ ⟨1, by decide⟩ _ rfl _ hw_v1991_1 _ (k1_off75_form ..) _ hc16
      have s_A1_26 : addf (AccMath.accVec (rowF fl tab (wL L).val (2 * t1.val + 1) (2 * k.val)) (offF fl (wL L).val (2 * t1.val + 1) (2 * k.val)) 1 26) (shapeCast S16 (pair1_lt.sl.v2041_1 d L tab k r g1 g2 hR hin) hc16) = AccMath.accVec (rowF fl tab (wL L).val (2 * t1.val + 1) (2 * k.val)) (offF fl (wL L).val (2 * t1.val + 1) (2 * k.val)) 1 27 :=
        acc_step d L fl tab (wL L).val (2 * t1.val + 1) (2 * k.val) 0 _ hRA ⟨26, by decide⟩ ⟨1, by decide⟩ _ rfl _ hw_v2027_1 _ (k1_off76_form ..) _ hc16
      have s_A1_27 : addf (AccMath.accVec (rowF fl tab (wL L).val (2 * t1.val + 1) (2 * k.val)) (offF fl (wL L).val (2 * t1.val + 1) (2 * k.val)) 1 27) (shapeCast S16 (pair1_lt.sl.v2077_1 d L tab k r g1 g2 hR hin) hc16) = AccMath.accVec (rowF fl tab (wL L).val (2 * t1.val + 1) (2 * k.val)) (offF fl (wL L).val (2 * t1.val + 1) (2 * k.val)) 1 28 :=
        acc_step d L fl tab (wL L).val (2 * t1.val + 1) (2 * k.val) 0 _ hRA ⟨27, by decide⟩ ⟨1, by decide⟩ _ rfl _ hw_v2063_1 _ (k1_off77_form ..) _ hc16
      have s_A1_28 : addf (AccMath.accVec (rowF fl tab (wL L).val (2 * t1.val + 1) (2 * k.val)) (offF fl (wL L).val (2 * t1.val + 1) (2 * k.val)) 1 28) (shapeCast S16 (pair1_lt.sl.v2113_1 d L tab k r g1 g2 hR hin) hc16) = AccMath.accVec (rowF fl tab (wL L).val (2 * t1.val + 1) (2 * k.val)) (offF fl (wL L).val (2 * t1.val + 1) (2 * k.val)) 1 29 :=
        acc_step d L fl tab (wL L).val (2 * t1.val + 1) (2 * k.val) 0 _ hRA ⟨28, by decide⟩ ⟨1, by decide⟩ _ rfl _ hw_v2099_1 _ (k1_off78_form ..) _ hc16
      have s_A1_29 : addf (AccMath.accVec (rowF fl tab (wL L).val (2 * t1.val + 1) (2 * k.val)) (offF fl (wL L).val (2 * t1.val + 1) (2 * k.val)) 1 29) (shapeCast S16 (pair1_lt.sl.v2149_1 d L tab k r g1 g2 hR hin) hc16) = AccMath.accVec (rowF fl tab (wL L).val (2 * t1.val + 1) (2 * k.val)) (offF fl (wL L).val (2 * t1.val + 1) (2 * k.val)) 1 30 :=
        acc_step d L fl tab (wL L).val (2 * t1.val + 1) (2 * k.val) 0 _ hRA ⟨29, by decide⟩ ⟨1, by decide⟩ _ rfl _ hw_v2135_1 _ (k1_off79_form ..) _ hc16
      have s_A1_30 : addf (AccMath.accVec (rowF fl tab (wL L).val (2 * t1.val + 1) (2 * k.val)) (offF fl (wL L).val (2 * t1.val + 1) (2 * k.val)) 1 30) (shapeCast S16 (pair1_lt.sl.v2185_1 d L tab k r g1 g2 hR hin) hc16) = AccMath.accVec (rowF fl tab (wL L).val (2 * t1.val + 1) (2 * k.val)) (offF fl (wL L).val (2 * t1.val + 1) (2 * k.val)) 1 31 :=
        acc_step d L fl tab (wL L).val (2 * t1.val + 1) (2 * k.val) 0 _ hRA ⟨30, by decide⟩ ⟨1, by decide⟩ _ rfl _ hw_v2171_1 _ (k1_off80_form ..) _ hc16
      have s_A1_31 : addf (AccMath.accVec (rowF fl tab (wL L).val (2 * t1.val + 1) (2 * k.val)) (offF fl (wL L).val (2 * t1.val + 1) (2 * k.val)) 1 31) (shapeCast S16 (pair1_lt.sl.v2221_1 d L tab k r g1 g2 hR hin) hc16) = AccMath.accVec (rowF fl tab (wL L).val (2 * t1.val + 1) (2 * k.val)) (offF fl (wL L).val (2 * t1.val + 1) (2 * k.val)) 1 32 :=
        acc_step d L fl tab (wL L).val (2 * t1.val + 1) (2 * k.val) 0 _ hRA ⟨31, by decide⟩ ⟨1, by decide⟩ _ rfl _ hw_v2207_1 _ (k1_off81_form ..) _ hc16
      have s_A1_32 : addf (AccMath.accVec (rowF fl tab (wL L).val (2 * t1.val + 1) (2 * k.val)) (offF fl (wL L).val (2 * t1.val + 1) (2 * k.val)) 1 32) (shapeCast S16 (pair1_lt.sl.v1681_2 d L tab k r g1 g2 hR hin) hc16) = AccMath.accVec (rowF fl tab (wL L).val (2 * t1.val + 1) (2 * k.val)) (offF fl (wL L).val (2 * t1.val + 1) (2 * k.val)) 1 33 :=
        acc_step d L fl tab (wL L).val (2 * t1.val + 1) (2 * k.val) 0 _ hRA ⟨32, by decide⟩ ⟨1, by decide⟩ _ rfl _ hw_v1667_2 _ (k1_off66_form ..) _ hc16
      have s_A1_33 : addf (AccMath.accVec (rowF fl tab (wL L).val (2 * t1.val + 1) (2 * k.val)) (offF fl (wL L).val (2 * t1.val + 1) (2 * k.val)) 1 33) (shapeCast S16 (pair1_lt.sl.v1717_2 d L tab k r g1 g2 hR hin) hc16) = AccMath.accVec (rowF fl tab (wL L).val (2 * t1.val + 1) (2 * k.val)) (offF fl (wL L).val (2 * t1.val + 1) (2 * k.val)) 1 34 :=
        acc_step d L fl tab (wL L).val (2 * t1.val + 1) (2 * k.val) 0 _ hRA ⟨33, by decide⟩ ⟨1, by decide⟩ _ rfl _ hw_v1703_2 _ (k1_off67_form ..) _ hc16
      have s_A1_34 : addf (AccMath.accVec (rowF fl tab (wL L).val (2 * t1.val + 1) (2 * k.val)) (offF fl (wL L).val (2 * t1.val + 1) (2 * k.val)) 1 34) (shapeCast S16 (pair1_lt.sl.v1753_2 d L tab k r g1 g2 hR hin) hc16) = AccMath.accVec (rowF fl tab (wL L).val (2 * t1.val + 1) (2 * k.val)) (offF fl (wL L).val (2 * t1.val + 1) (2 * k.val)) 1 35 :=
        acc_step d L fl tab (wL L).val (2 * t1.val + 1) (2 * k.val) 0 _ hRA ⟨34, by decide⟩ ⟨1, by decide⟩ _ rfl _ hw_v1739_2 _ (k1_off68_form ..) _ hc16
      have s_A1_35 : addf (AccMath.accVec (rowF fl tab (wL L).val (2 * t1.val + 1) (2 * k.val)) (offF fl (wL L).val (2 * t1.val + 1) (2 * k.val)) 1 35) (shapeCast S16 (pair1_lt.sl.v1789_2 d L tab k r g1 g2 hR hin) hc16) = AccMath.accVec (rowF fl tab (wL L).val (2 * t1.val + 1) (2 * k.val)) (offF fl (wL L).val (2 * t1.val + 1) (2 * k.val)) 1 36 :=
        acc_step d L fl tab (wL L).val (2 * t1.val + 1) (2 * k.val) 0 _ hRA ⟨35, by decide⟩ ⟨1, by decide⟩ _ rfl _ hw_v1775_2 _ (k1_off69_form ..) _ hc16
      have s_A1_36 : addf (AccMath.accVec (rowF fl tab (wL L).val (2 * t1.val + 1) (2 * k.val)) (offF fl (wL L).val (2 * t1.val + 1) (2 * k.val)) 1 36) (shapeCast S16 (pair1_lt.sl.v1825_2 d L tab k r g1 g2 hR hin) hc16) = AccMath.accVec (rowF fl tab (wL L).val (2 * t1.val + 1) (2 * k.val)) (offF fl (wL L).val (2 * t1.val + 1) (2 * k.val)) 1 37 :=
        acc_step d L fl tab (wL L).val (2 * t1.val + 1) (2 * k.val) 0 _ hRA ⟨36, by decide⟩ ⟨1, by decide⟩ _ rfl _ hw_v1811_2 _ (k1_off70_form ..) _ hc16
      have s_A1_37 : addf (AccMath.accVec (rowF fl tab (wL L).val (2 * t1.val + 1) (2 * k.val)) (offF fl (wL L).val (2 * t1.val + 1) (2 * k.val)) 1 37) (shapeCast S16 (pair1_lt.sl.v1861_2 d L tab k r g1 g2 hR hin) hc16) = AccMath.accVec (rowF fl tab (wL L).val (2 * t1.val + 1) (2 * k.val)) (offF fl (wL L).val (2 * t1.val + 1) (2 * k.val)) 1 38 :=
        acc_step d L fl tab (wL L).val (2 * t1.val + 1) (2 * k.val) 0 _ hRA ⟨37, by decide⟩ ⟨1, by decide⟩ _ rfl _ hw_v1847_2 _ (k1_off71_form ..) _ hc16
      have s_A1_38 : addf (AccMath.accVec (rowF fl tab (wL L).val (2 * t1.val + 1) (2 * k.val)) (offF fl (wL L).val (2 * t1.val + 1) (2 * k.val)) 1 38) (shapeCast S16 (pair1_lt.sl.v1897_2 d L tab k r g1 g2 hR hin) hc16) = AccMath.accVec (rowF fl tab (wL L).val (2 * t1.val + 1) (2 * k.val)) (offF fl (wL L).val (2 * t1.val + 1) (2 * k.val)) 1 39 :=
        acc_step d L fl tab (wL L).val (2 * t1.val + 1) (2 * k.val) 0 _ hRA ⟨38, by decide⟩ ⟨1, by decide⟩ _ rfl _ hw_v1883_2 _ (k1_off72_form ..) _ hc16
      have s_A1_39 : addf (AccMath.accVec (rowF fl tab (wL L).val (2 * t1.val + 1) (2 * k.val)) (offF fl (wL L).val (2 * t1.val + 1) (2 * k.val)) 1 39) (shapeCast S16 (pair1_lt.sl.v1933_2 d L tab k r g1 g2 hR hin) hc16) = AccMath.accVec (rowF fl tab (wL L).val (2 * t1.val + 1) (2 * k.val)) (offF fl (wL L).val (2 * t1.val + 1) (2 * k.val)) 1 40 :=
        acc_step d L fl tab (wL L).val (2 * t1.val + 1) (2 * k.val) 0 _ hRA ⟨39, by decide⟩ ⟨1, by decide⟩ _ rfl _ hw_v1919_2 _ (k1_off73_form ..) _ hc16
      have s_A1_40 : addf (AccMath.accVec (rowF fl tab (wL L).val (2 * t1.val + 1) (2 * k.val)) (offF fl (wL L).val (2 * t1.val + 1) (2 * k.val)) 1 40) (shapeCast S16 (pair1_lt.sl.v1969_2 d L tab k r g1 g2 hR hin) hc16) = AccMath.accVec (rowF fl tab (wL L).val (2 * t1.val + 1) (2 * k.val)) (offF fl (wL L).val (2 * t1.val + 1) (2 * k.val)) 1 41 :=
        acc_step d L fl tab (wL L).val (2 * t1.val + 1) (2 * k.val) 0 _ hRA ⟨40, by decide⟩ ⟨1, by decide⟩ _ rfl _ hw_v1955_2 _ (k1_off74_form ..) _ hc16
      have s_A1_41 : addf (AccMath.accVec (rowF fl tab (wL L).val (2 * t1.val + 1) (2 * k.val)) (offF fl (wL L).val (2 * t1.val + 1) (2 * k.val)) 1 41) (shapeCast S16 (pair1_lt.sl.v2005_2 d L tab k r g1 g2 hR hin) hc16) = AccMath.accVec (rowF fl tab (wL L).val (2 * t1.val + 1) (2 * k.val)) (offF fl (wL L).val (2 * t1.val + 1) (2 * k.val)) 1 42 :=
        acc_step d L fl tab (wL L).val (2 * t1.val + 1) (2 * k.val) 0 _ hRA ⟨41, by decide⟩ ⟨1, by decide⟩ _ rfl _ hw_v1991_2 _ (k1_off75_form ..) _ hc16
      have s_A1_42 : addf (AccMath.accVec (rowF fl tab (wL L).val (2 * t1.val + 1) (2 * k.val)) (offF fl (wL L).val (2 * t1.val + 1) (2 * k.val)) 1 42) (shapeCast S16 (pair1_lt.sl.v2041_2 d L tab k r g1 g2 hR hin) hc16) = AccMath.accVec (rowF fl tab (wL L).val (2 * t1.val + 1) (2 * k.val)) (offF fl (wL L).val (2 * t1.val + 1) (2 * k.val)) 1 43 :=
        acc_step d L fl tab (wL L).val (2 * t1.val + 1) (2 * k.val) 0 _ hRA ⟨42, by decide⟩ ⟨1, by decide⟩ _ rfl _ hw_v2027_2 _ (k1_off76_form ..) _ hc16
      have s_A1_43 : addf (AccMath.accVec (rowF fl tab (wL L).val (2 * t1.val + 1) (2 * k.val)) (offF fl (wL L).val (2 * t1.val + 1) (2 * k.val)) 1 43) (shapeCast S16 (pair1_lt.sl.v2077_2 d L tab k r g1 g2 hR hin) hc16) = AccMath.accVec (rowF fl tab (wL L).val (2 * t1.val + 1) (2 * k.val)) (offF fl (wL L).val (2 * t1.val + 1) (2 * k.val)) 1 44 :=
        acc_step d L fl tab (wL L).val (2 * t1.val + 1) (2 * k.val) 0 _ hRA ⟨43, by decide⟩ ⟨1, by decide⟩ _ rfl _ hw_v2063_2 _ (k1_off77_form ..) _ hc16
      have s_A1_44 : addf (AccMath.accVec (rowF fl tab (wL L).val (2 * t1.val + 1) (2 * k.val)) (offF fl (wL L).val (2 * t1.val + 1) (2 * k.val)) 1 44) (shapeCast S16 (pair1_lt.sl.v2113_2 d L tab k r g1 g2 hR hin) hc16) = AccMath.accVec (rowF fl tab (wL L).val (2 * t1.val + 1) (2 * k.val)) (offF fl (wL L).val (2 * t1.val + 1) (2 * k.val)) 1 45 :=
        acc_step d L fl tab (wL L).val (2 * t1.val + 1) (2 * k.val) 0 _ hRA ⟨44, by decide⟩ ⟨1, by decide⟩ _ rfl _ hw_v2099_2 _ (k1_off78_form ..) _ hc16
      have s_A1_45 : addf (AccMath.accVec (rowF fl tab (wL L).val (2 * t1.val + 1) (2 * k.val)) (offF fl (wL L).val (2 * t1.val + 1) (2 * k.val)) 1 45) (shapeCast S16 (pair1_lt.sl.v2149_2 d L tab k r g1 g2 hR hin) hc16) = AccMath.accVec (rowF fl tab (wL L).val (2 * t1.val + 1) (2 * k.val)) (offF fl (wL L).val (2 * t1.val + 1) (2 * k.val)) 1 46 :=
        acc_step d L fl tab (wL L).val (2 * t1.val + 1) (2 * k.val) 0 _ hRA ⟨45, by decide⟩ ⟨1, by decide⟩ _ rfl _ hw_v2135_2 _ (k1_off79_form ..) _ hc16
      have s_A1_46 : addf (AccMath.accVec (rowF fl tab (wL L).val (2 * t1.val + 1) (2 * k.val)) (offF fl (wL L).val (2 * t1.val + 1) (2 * k.val)) 1 46) (shapeCast S16 (pair1_lt.sl.v2185_2 d L tab k r g1 g2 hR hin) hc16) = AccMath.accVec (rowF fl tab (wL L).val (2 * t1.val + 1) (2 * k.val)) (offF fl (wL L).val (2 * t1.val + 1) (2 * k.val)) 1 47 :=
        acc_step d L fl tab (wL L).val (2 * t1.val + 1) (2 * k.val) 0 _ hRA ⟨46, by decide⟩ ⟨1, by decide⟩ _ rfl _ hw_v2171_2 _ (k1_off80_form ..) _ hc16
      have s_A1_47 : addf (AccMath.accVec (rowF fl tab (wL L).val (2 * t1.val + 1) (2 * k.val)) (offF fl (wL L).val (2 * t1.val + 1) (2 * k.val)) 1 47) (shapeCast S16 (pair1_lt.sl.v2221_2 d L tab k r g1 g2 hR hin) hc16) = AccMath.accVec (rowF fl tab (wL L).val (2 * t1.val + 1) (2 * k.val)) (offF fl (wL L).val (2 * t1.val + 1) (2 * k.val)) 1 48 :=
        acc_step d L fl tab (wL L).val (2 * t1.val + 1) (2 * k.val) 0 _ hRA ⟨47, by decide⟩ ⟨1, by decide⟩ _ rfl _ hw_v2207_2 _ (k1_off81_form ..) _ hc16
      have s_A1_48 : addf (AccMath.accVec (rowF fl tab (wL L).val (2 * t1.val + 1) (2 * k.val)) (offF fl (wL L).val (2 * t1.val + 1) (2 * k.val)) 1 48) (shapeCast S16 (pair1_lt.sl.v1470 d L tab k r g1 g2 hR hin) hc16) = AccMath.accVec (rowF fl tab (wL L).val (2 * t1.val + 1) (2 * k.val)) (offF fl (wL L).val (2 * t1.val + 1) (2 * k.val)) 1 49 :=
        acc_step d L fl tab (wL L).val (2 * t1.val + 1) (2 * k.val) 0 _ hRA ⟨48, by decide⟩ ⟨1, by decide⟩ _ rfl _ hw_v1456 _ (k1_off83_form ..) _ hc16
      have s_A1_49 : addf (AccMath.accVec (rowF fl tab (wL L).val (2 * t1.val + 1) (2 * k.val)) (offF fl (wL L).val (2 * t1.val + 1) (2 * k.val)) 1 49) (shapeCast S16 (pair1_lt.sl.v1504 d L tab k r g1 g2 hR hin) hc16) = AccMath.accVec (rowF fl tab (wL L).val (2 * t1.val + 1) (2 * k.val)) (offF fl (wL L).val (2 * t1.val + 1) (2 * k.val)) 1 50 :=
        acc_step d L fl tab (wL L).val (2 * t1.val + 1) (2 * k.val) 0 _ hRA ⟨49, by decide⟩ ⟨1, by decide⟩ _ rfl _ hw_v1490 _ (k1_off84_form ..) _ hc16
      have hP_A1 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val)) (offF fl (wL L).val (2 * t1.val + 1) (2 * k.val)) 1 0) (shapeCast S16 (pair1_lt.sl.v1681 d L tab k r g1 g2 hR hin) hc16)) (shapeCast S16 (pair1_lt.sl.v1717 d L tab k r g1 g2 hR hin) hc16)) (shapeCast S16 (pair1_lt.sl.v1753 d L tab k r g1 g2 hR hin) hc16)) (shapeCast S16 (pair1_lt.sl.v1789 d L tab k r g1 g2 hR hin) hc16)) (shapeCast S16 (pair1_lt.sl.v1825 d L tab k r g1 g2 hR hin) hc16)) (shapeCast S16 (pair1_lt.sl.v1861 d L tab k r g1 g2 hR hin) hc16)) (shapeCast S16 (pair1_lt.sl.v1897 d L tab k r g1 g2 hR hin) hc16)) (shapeCast S16 (pair1_lt.sl.v1933 d L tab k r g1 g2 hR hin) hc16)) (shapeCast S16 (pair1_lt.sl.v1969 d L tab k r g1 g2 hR hin) hc16)) (shapeCast S16 (pair1_lt.sl.v2005 d L tab k r g1 g2 hR hin) hc16)) (shapeCast S16 (pair1_lt.sl.v2041 d L tab k r g1 g2 hR hin) hc16)) (shapeCast S16 (pair1_lt.sl.v2077 d L tab k r g1 g2 hR hin) hc16)) (shapeCast S16 (pair1_lt.sl.v2113 d L tab k r g1 g2 hR hin) hc16)) (shapeCast S16 (pair1_lt.sl.v2149 d L tab k r g1 g2 hR hin) hc16)) (shapeCast S16 (pair1_lt.sl.v2185 d L tab k r g1 g2 hR hin) hc16)) (shapeCast S16 (pair1_lt.sl.v2221 d L tab k r g1 g2 hR hin) hc16)) (shapeCast S16 (pair1_lt.sl.v1681_1 d L tab k r g1 g2 hR hin) hc16)) (shapeCast S16 (pair1_lt.sl.v1717_1 d L tab k r g1 g2 hR hin) hc16)) (shapeCast S16 (pair1_lt.sl.v1753_1 d L tab k r g1 g2 hR hin) hc16)) (shapeCast S16 (pair1_lt.sl.v1789_1 d L tab k r g1 g2 hR hin) hc16)) (shapeCast S16 (pair1_lt.sl.v1825_1 d L tab k r g1 g2 hR hin) hc16)) (shapeCast S16 (pair1_lt.sl.v1861_1 d L tab k r g1 g2 hR hin) hc16)) (shapeCast S16 (pair1_lt.sl.v1897_1 d L tab k r g1 g2 hR hin) hc16)) (shapeCast S16 (pair1_lt.sl.v1933_1 d L tab k r g1 g2 hR hin) hc16)) (shapeCast S16 (pair1_lt.sl.v1969_1 d L tab k r g1 g2 hR hin) hc16)) (shapeCast S16 (pair1_lt.sl.v2005_1 d L tab k r g1 g2 hR hin) hc16)) (shapeCast S16 (pair1_lt.sl.v2041_1 d L tab k r g1 g2 hR hin) hc16)) (shapeCast S16 (pair1_lt.sl.v2077_1 d L tab k r g1 g2 hR hin) hc16)) (shapeCast S16 (pair1_lt.sl.v2113_1 d L tab k r g1 g2 hR hin) hc16)) (shapeCast S16 (pair1_lt.sl.v2149_1 d L tab k r g1 g2 hR hin) hc16)) (shapeCast S16 (pair1_lt.sl.v2185_1 d L tab k r g1 g2 hR hin) hc16)) (shapeCast S16 (pair1_lt.sl.v2221_1 d L tab k r g1 g2 hR hin) hc16)) (shapeCast S16 (pair1_lt.sl.v1681_2 d L tab k r g1 g2 hR hin) hc16)) (shapeCast S16 (pair1_lt.sl.v1717_2 d L tab k r g1 g2 hR hin) hc16)) (shapeCast S16 (pair1_lt.sl.v1753_2 d L tab k r g1 g2 hR hin) hc16)) (shapeCast S16 (pair1_lt.sl.v1789_2 d L tab k r g1 g2 hR hin) hc16)) (shapeCast S16 (pair1_lt.sl.v1825_2 d L tab k r g1 g2 hR hin) hc16)) (shapeCast S16 (pair1_lt.sl.v1861_2 d L tab k r g1 g2 hR hin) hc16)) (shapeCast S16 (pair1_lt.sl.v1897_2 d L tab k r g1 g2 hR hin) hc16)) (shapeCast S16 (pair1_lt.sl.v1933_2 d L tab k r g1 g2 hR hin) hc16)) (shapeCast S16 (pair1_lt.sl.v1969_2 d L tab k r g1 g2 hR hin) hc16)) (shapeCast S16 (pair1_lt.sl.v2005_2 d L tab k r g1 g2 hR hin) hc16)) (shapeCast S16 (pair1_lt.sl.v2041_2 d L tab k r g1 g2 hR hin) hc16)) (shapeCast S16 (pair1_lt.sl.v2077_2 d L tab k r g1 g2 hR hin) hc16)) (shapeCast S16 (pair1_lt.sl.v2113_2 d L tab k r g1 g2 hR hin) hc16)) (shapeCast S16 (pair1_lt.sl.v2149_2 d L tab k r g1 g2 hR hin) hc16)) (shapeCast S16 (pair1_lt.sl.v2185_2 d L tab k r g1 g2 hR hin) hc16)) (shapeCast S16 (pair1_lt.sl.v2221_2 d L tab k r g1 g2 hR hin) hc16)) (shapeCast S16 (pair1_lt.sl.v1470 d L tab k r g1 g2 hR hin) hc16)) (shapeCast S16 (pair1_lt.sl.v1504 d L tab k r g1 g2 hR hin) hc16)) hc1 x = Spec.bagPartial fl tab (128 * (wL L).val + 16 * (2 * t1.val + 1) + (2 * k.val)) (16 * 1 + (x 2).val) 50 := fun x => by
        rw [s_A1_0, s_A1_1, s_A1_2, s_A1_3, s_A1_4, s_A1_5, s_A1_6, s_A1_7, s_A1_8, s_A1_9, s_A1_10, s_A1_11, s_A1_12, s_A1_13, s_A1_14, s_A1_15, s_A1_16, s_A1_17, s_A1_18, s_A1_19, s_A1_20, s_A1_21, s_A1_22, s_A1_23, s_A1_24, s_A1_25, s_A1_26, s_A1_27, s_A1_28, s_A1_29, s_A1_30, s_A1_31, s_A1_32, s_A1_33, s_A1_34, s_A1_35, s_A1_36, s_A1_37, s_A1_38, s_A1_39, s_A1_40, s_A1_41, s_A1_42, s_A1_43, s_A1_44, s_A1_45, s_A1_46, s_A1_47, s_A1_48, s_A1_49]
        exact payload_ok fl tab (wL L).val (2 * t1.val + 1) (2 * k.val) ⟨1, by decide⟩ hc1 x
      have s_A2_0 : addf (AccMath.accVec (rowF fl tab (wL L).val (2 * t1.val + 1) (2 * k.val)) (offF fl (wL L).val (2 * t1.val + 1) (2 * k.val)) 2 0) (shapeCast S16 (pair1_lt.sl.v1689 d L tab k r g1 g2 hR hin) hc16) = AccMath.accVec (rowF fl tab (wL L).val (2 * t1.val + 1) (2 * k.val)) (offF fl (wL L).val (2 * t1.val + 1) (2 * k.val)) 2 1 :=
        acc_step d L fl tab (wL L).val (2 * t1.val + 1) (2 * k.val) 0 _ hRA ⟨0, by decide⟩ ⟨2, by decide⟩ _ rfl _ hw_v1667 _ (k1_off66_form ..) _ hc16
      have s_A2_1 : addf (AccMath.accVec (rowF fl tab (wL L).val (2 * t1.val + 1) (2 * k.val)) (offF fl (wL L).val (2 * t1.val + 1) (2 * k.val)) 2 1) (shapeCast S16 (pair1_lt.sl.v1725 d L tab k r g1 g2 hR hin) hc16) = AccMath.accVec (rowF fl tab (wL L).val (2 * t1.val + 1) (2 * k.val)) (offF fl (wL L).val (2 * t1.val + 1) (2 * k.val)) 2 2 :=
        acc_step d L fl tab (wL L).val (2 * t1.val + 1) (2 * k.val) 0 _ hRA ⟨1, by decide⟩ ⟨2, by decide⟩ _ rfl _ hw_v1703 _ (k1_off67_form ..) _ hc16
      have s_A2_2 : addf (AccMath.accVec (rowF fl tab (wL L).val (2 * t1.val + 1) (2 * k.val)) (offF fl (wL L).val (2 * t1.val + 1) (2 * k.val)) 2 2) (shapeCast S16 (pair1_lt.sl.v1761 d L tab k r g1 g2 hR hin) hc16) = AccMath.accVec (rowF fl tab (wL L).val (2 * t1.val + 1) (2 * k.val)) (offF fl (wL L).val (2 * t1.val + 1) (2 * k.val)) 2 3 :=
        acc_step d L fl tab (wL L).val (2 * t1.val + 1) (2 * k.val) 0 _ hRA ⟨2, by decide⟩ ⟨2, by decide⟩ _ rfl _ hw_v1739 _ (k1_off68_form ..) _ hc16
      have s_A2_3 : addf (AccMath.accVec (rowF fl tab (wL L).val (2 * t1.val + 1) (2 * k.val)) (offF fl (wL L).val (2 * t1.val + 1) (2 * k.val)) 2 3) (shapeCast S16 (pair1_lt.sl.v1797 d L tab k r g1 g2 hR hin) hc16) = AccMath.accVec (rowF fl tab (wL L).val (2 * t1.val + 1) (2 * k.val)) (offF fl (wL L).val (2 * t1.val + 1) (2 * k.val)) 2 4 :=
        acc_step d L fl tab (wL L).val (2 * t1.val + 1) (2 * k.val) 0 _ hRA ⟨3, by decide⟩ ⟨2, by decide⟩ _ rfl _ hw_v1775 _ (k1_off69_form ..) _ hc16
      have s_A2_4 : addf (AccMath.accVec (rowF fl tab (wL L).val (2 * t1.val + 1) (2 * k.val)) (offF fl (wL L).val (2 * t1.val + 1) (2 * k.val)) 2 4) (shapeCast S16 (pair1_lt.sl.v1833 d L tab k r g1 g2 hR hin) hc16) = AccMath.accVec (rowF fl tab (wL L).val (2 * t1.val + 1) (2 * k.val)) (offF fl (wL L).val (2 * t1.val + 1) (2 * k.val)) 2 5 :=
        acc_step d L fl tab (wL L).val (2 * t1.val + 1) (2 * k.val) 0 _ hRA ⟨4, by decide⟩ ⟨2, by decide⟩ _ rfl _ hw_v1811 _ (k1_off70_form ..) _ hc16
      have s_A2_5 : addf (AccMath.accVec (rowF fl tab (wL L).val (2 * t1.val + 1) (2 * k.val)) (offF fl (wL L).val (2 * t1.val + 1) (2 * k.val)) 2 5) (shapeCast S16 (pair1_lt.sl.v1869 d L tab k r g1 g2 hR hin) hc16) = AccMath.accVec (rowF fl tab (wL L).val (2 * t1.val + 1) (2 * k.val)) (offF fl (wL L).val (2 * t1.val + 1) (2 * k.val)) 2 6 :=
        acc_step d L fl tab (wL L).val (2 * t1.val + 1) (2 * k.val) 0 _ hRA ⟨5, by decide⟩ ⟨2, by decide⟩ _ rfl _ hw_v1847 _ (k1_off71_form ..) _ hc16
      have s_A2_6 : addf (AccMath.accVec (rowF fl tab (wL L).val (2 * t1.val + 1) (2 * k.val)) (offF fl (wL L).val (2 * t1.val + 1) (2 * k.val)) 2 6) (shapeCast S16 (pair1_lt.sl.v1905 d L tab k r g1 g2 hR hin) hc16) = AccMath.accVec (rowF fl tab (wL L).val (2 * t1.val + 1) (2 * k.val)) (offF fl (wL L).val (2 * t1.val + 1) (2 * k.val)) 2 7 :=
        acc_step d L fl tab (wL L).val (2 * t1.val + 1) (2 * k.val) 0 _ hRA ⟨6, by decide⟩ ⟨2, by decide⟩ _ rfl _ hw_v1883 _ (k1_off72_form ..) _ hc16
      have s_A2_7 : addf (AccMath.accVec (rowF fl tab (wL L).val (2 * t1.val + 1) (2 * k.val)) (offF fl (wL L).val (2 * t1.val + 1) (2 * k.val)) 2 7) (shapeCast S16 (pair1_lt.sl.v1941 d L tab k r g1 g2 hR hin) hc16) = AccMath.accVec (rowF fl tab (wL L).val (2 * t1.val + 1) (2 * k.val)) (offF fl (wL L).val (2 * t1.val + 1) (2 * k.val)) 2 8 :=
        acc_step d L fl tab (wL L).val (2 * t1.val + 1) (2 * k.val) 0 _ hRA ⟨7, by decide⟩ ⟨2, by decide⟩ _ rfl _ hw_v1919 _ (k1_off73_form ..) _ hc16
      have s_A2_8 : addf (AccMath.accVec (rowF fl tab (wL L).val (2 * t1.val + 1) (2 * k.val)) (offF fl (wL L).val (2 * t1.val + 1) (2 * k.val)) 2 8) (shapeCast S16 (pair1_lt.sl.v1977 d L tab k r g1 g2 hR hin) hc16) = AccMath.accVec (rowF fl tab (wL L).val (2 * t1.val + 1) (2 * k.val)) (offF fl (wL L).val (2 * t1.val + 1) (2 * k.val)) 2 9 :=
        acc_step d L fl tab (wL L).val (2 * t1.val + 1) (2 * k.val) 0 _ hRA ⟨8, by decide⟩ ⟨2, by decide⟩ _ rfl _ hw_v1955 _ (k1_off74_form ..) _ hc16
      have s_A2_9 : addf (AccMath.accVec (rowF fl tab (wL L).val (2 * t1.val + 1) (2 * k.val)) (offF fl (wL L).val (2 * t1.val + 1) (2 * k.val)) 2 9) (shapeCast S16 (pair1_lt.sl.v2013 d L tab k r g1 g2 hR hin) hc16) = AccMath.accVec (rowF fl tab (wL L).val (2 * t1.val + 1) (2 * k.val)) (offF fl (wL L).val (2 * t1.val + 1) (2 * k.val)) 2 10 :=
        acc_step d L fl tab (wL L).val (2 * t1.val + 1) (2 * k.val) 0 _ hRA ⟨9, by decide⟩ ⟨2, by decide⟩ _ rfl _ hw_v1991 _ (k1_off75_form ..) _ hc16
      have s_A2_10 : addf (AccMath.accVec (rowF fl tab (wL L).val (2 * t1.val + 1) (2 * k.val)) (offF fl (wL L).val (2 * t1.val + 1) (2 * k.val)) 2 10) (shapeCast S16 (pair1_lt.sl.v2049 d L tab k r g1 g2 hR hin) hc16) = AccMath.accVec (rowF fl tab (wL L).val (2 * t1.val + 1) (2 * k.val)) (offF fl (wL L).val (2 * t1.val + 1) (2 * k.val)) 2 11 :=
        acc_step d L fl tab (wL L).val (2 * t1.val + 1) (2 * k.val) 0 _ hRA ⟨10, by decide⟩ ⟨2, by decide⟩ _ rfl _ hw_v2027 _ (k1_off76_form ..) _ hc16
      have s_A2_11 : addf (AccMath.accVec (rowF fl tab (wL L).val (2 * t1.val + 1) (2 * k.val)) (offF fl (wL L).val (2 * t1.val + 1) (2 * k.val)) 2 11) (shapeCast S16 (pair1_lt.sl.v2085 d L tab k r g1 g2 hR hin) hc16) = AccMath.accVec (rowF fl tab (wL L).val (2 * t1.val + 1) (2 * k.val)) (offF fl (wL L).val (2 * t1.val + 1) (2 * k.val)) 2 12 :=
        acc_step d L fl tab (wL L).val (2 * t1.val + 1) (2 * k.val) 0 _ hRA ⟨11, by decide⟩ ⟨2, by decide⟩ _ rfl _ hw_v2063 _ (k1_off77_form ..) _ hc16
      have s_A2_12 : addf (AccMath.accVec (rowF fl tab (wL L).val (2 * t1.val + 1) (2 * k.val)) (offF fl (wL L).val (2 * t1.val + 1) (2 * k.val)) 2 12) (shapeCast S16 (pair1_lt.sl.v2121 d L tab k r g1 g2 hR hin) hc16) = AccMath.accVec (rowF fl tab (wL L).val (2 * t1.val + 1) (2 * k.val)) (offF fl (wL L).val (2 * t1.val + 1) (2 * k.val)) 2 13 :=
        acc_step d L fl tab (wL L).val (2 * t1.val + 1) (2 * k.val) 0 _ hRA ⟨12, by decide⟩ ⟨2, by decide⟩ _ rfl _ hw_v2099 _ (k1_off78_form ..) _ hc16
      have s_A2_13 : addf (AccMath.accVec (rowF fl tab (wL L).val (2 * t1.val + 1) (2 * k.val)) (offF fl (wL L).val (2 * t1.val + 1) (2 * k.val)) 2 13) (shapeCast S16 (pair1_lt.sl.v2157 d L tab k r g1 g2 hR hin) hc16) = AccMath.accVec (rowF fl tab (wL L).val (2 * t1.val + 1) (2 * k.val)) (offF fl (wL L).val (2 * t1.val + 1) (2 * k.val)) 2 14 :=
        acc_step d L fl tab (wL L).val (2 * t1.val + 1) (2 * k.val) 0 _ hRA ⟨13, by decide⟩ ⟨2, by decide⟩ _ rfl _ hw_v2135 _ (k1_off79_form ..) _ hc16
      have s_A2_14 : addf (AccMath.accVec (rowF fl tab (wL L).val (2 * t1.val + 1) (2 * k.val)) (offF fl (wL L).val (2 * t1.val + 1) (2 * k.val)) 2 14) (shapeCast S16 (pair1_lt.sl.v2193 d L tab k r g1 g2 hR hin) hc16) = AccMath.accVec (rowF fl tab (wL L).val (2 * t1.val + 1) (2 * k.val)) (offF fl (wL L).val (2 * t1.val + 1) (2 * k.val)) 2 15 :=
        acc_step d L fl tab (wL L).val (2 * t1.val + 1) (2 * k.val) 0 _ hRA ⟨14, by decide⟩ ⟨2, by decide⟩ _ rfl _ hw_v2171 _ (k1_off80_form ..) _ hc16
      have s_A2_15 : addf (AccMath.accVec (rowF fl tab (wL L).val (2 * t1.val + 1) (2 * k.val)) (offF fl (wL L).val (2 * t1.val + 1) (2 * k.val)) 2 15) (shapeCast S16 (pair1_lt.sl.v2229 d L tab k r g1 g2 hR hin) hc16) = AccMath.accVec (rowF fl tab (wL L).val (2 * t1.val + 1) (2 * k.val)) (offF fl (wL L).val (2 * t1.val + 1) (2 * k.val)) 2 16 :=
        acc_step d L fl tab (wL L).val (2 * t1.val + 1) (2 * k.val) 0 _ hRA ⟨15, by decide⟩ ⟨2, by decide⟩ _ rfl _ hw_v2207 _ (k1_off81_form ..) _ hc16
      have s_A2_16 : addf (AccMath.accVec (rowF fl tab (wL L).val (2 * t1.val + 1) (2 * k.val)) (offF fl (wL L).val (2 * t1.val + 1) (2 * k.val)) 2 16) (shapeCast S16 (pair1_lt.sl.v1689_1 d L tab k r g1 g2 hR hin) hc16) = AccMath.accVec (rowF fl tab (wL L).val (2 * t1.val + 1) (2 * k.val)) (offF fl (wL L).val (2 * t1.val + 1) (2 * k.val)) 2 17 :=
        acc_step d L fl tab (wL L).val (2 * t1.val + 1) (2 * k.val) 0 _ hRA ⟨16, by decide⟩ ⟨2, by decide⟩ _ rfl _ hw_v1667_1 _ (k1_off66_form ..) _ hc16
      have s_A2_17 : addf (AccMath.accVec (rowF fl tab (wL L).val (2 * t1.val + 1) (2 * k.val)) (offF fl (wL L).val (2 * t1.val + 1) (2 * k.val)) 2 17) (shapeCast S16 (pair1_lt.sl.v1725_1 d L tab k r g1 g2 hR hin) hc16) = AccMath.accVec (rowF fl tab (wL L).val (2 * t1.val + 1) (2 * k.val)) (offF fl (wL L).val (2 * t1.val + 1) (2 * k.val)) 2 18 :=
        acc_step d L fl tab (wL L).val (2 * t1.val + 1) (2 * k.val) 0 _ hRA ⟨17, by decide⟩ ⟨2, by decide⟩ _ rfl _ hw_v1703_1 _ (k1_off67_form ..) _ hc16
      have s_A2_18 : addf (AccMath.accVec (rowF fl tab (wL L).val (2 * t1.val + 1) (2 * k.val)) (offF fl (wL L).val (2 * t1.val + 1) (2 * k.val)) 2 18) (shapeCast S16 (pair1_lt.sl.v1761_1 d L tab k r g1 g2 hR hin) hc16) = AccMath.accVec (rowF fl tab (wL L).val (2 * t1.val + 1) (2 * k.val)) (offF fl (wL L).val (2 * t1.val + 1) (2 * k.val)) 2 19 :=
        acc_step d L fl tab (wL L).val (2 * t1.val + 1) (2 * k.val) 0 _ hRA ⟨18, by decide⟩ ⟨2, by decide⟩ _ rfl _ hw_v1739_1 _ (k1_off68_form ..) _ hc16
      have s_A2_19 : addf (AccMath.accVec (rowF fl tab (wL L).val (2 * t1.val + 1) (2 * k.val)) (offF fl (wL L).val (2 * t1.val + 1) (2 * k.val)) 2 19) (shapeCast S16 (pair1_lt.sl.v1797_1 d L tab k r g1 g2 hR hin) hc16) = AccMath.accVec (rowF fl tab (wL L).val (2 * t1.val + 1) (2 * k.val)) (offF fl (wL L).val (2 * t1.val + 1) (2 * k.val)) 2 20 :=
        acc_step d L fl tab (wL L).val (2 * t1.val + 1) (2 * k.val) 0 _ hRA ⟨19, by decide⟩ ⟨2, by decide⟩ _ rfl _ hw_v1775_1 _ (k1_off69_form ..) _ hc16
      have s_A2_20 : addf (AccMath.accVec (rowF fl tab (wL L).val (2 * t1.val + 1) (2 * k.val)) (offF fl (wL L).val (2 * t1.val + 1) (2 * k.val)) 2 20) (shapeCast S16 (pair1_lt.sl.v1833_1 d L tab k r g1 g2 hR hin) hc16) = AccMath.accVec (rowF fl tab (wL L).val (2 * t1.val + 1) (2 * k.val)) (offF fl (wL L).val (2 * t1.val + 1) (2 * k.val)) 2 21 :=
        acc_step d L fl tab (wL L).val (2 * t1.val + 1) (2 * k.val) 0 _ hRA ⟨20, by decide⟩ ⟨2, by decide⟩ _ rfl _ hw_v1811_1 _ (k1_off70_form ..) _ hc16
      have s_A2_21 : addf (AccMath.accVec (rowF fl tab (wL L).val (2 * t1.val + 1) (2 * k.val)) (offF fl (wL L).val (2 * t1.val + 1) (2 * k.val)) 2 21) (shapeCast S16 (pair1_lt.sl.v1869_1 d L tab k r g1 g2 hR hin) hc16) = AccMath.accVec (rowF fl tab (wL L).val (2 * t1.val + 1) (2 * k.val)) (offF fl (wL L).val (2 * t1.val + 1) (2 * k.val)) 2 22 :=
        acc_step d L fl tab (wL L).val (2 * t1.val + 1) (2 * k.val) 0 _ hRA ⟨21, by decide⟩ ⟨2, by decide⟩ _ rfl _ hw_v1847_1 _ (k1_off71_form ..) _ hc16
      have s_A2_22 : addf (AccMath.accVec (rowF fl tab (wL L).val (2 * t1.val + 1) (2 * k.val)) (offF fl (wL L).val (2 * t1.val + 1) (2 * k.val)) 2 22) (shapeCast S16 (pair1_lt.sl.v1905_1 d L tab k r g1 g2 hR hin) hc16) = AccMath.accVec (rowF fl tab (wL L).val (2 * t1.val + 1) (2 * k.val)) (offF fl (wL L).val (2 * t1.val + 1) (2 * k.val)) 2 23 :=
        acc_step d L fl tab (wL L).val (2 * t1.val + 1) (2 * k.val) 0 _ hRA ⟨22, by decide⟩ ⟨2, by decide⟩ _ rfl _ hw_v1883_1 _ (k1_off72_form ..) _ hc16
      have s_A2_23 : addf (AccMath.accVec (rowF fl tab (wL L).val (2 * t1.val + 1) (2 * k.val)) (offF fl (wL L).val (2 * t1.val + 1) (2 * k.val)) 2 23) (shapeCast S16 (pair1_lt.sl.v1941_1 d L tab k r g1 g2 hR hin) hc16) = AccMath.accVec (rowF fl tab (wL L).val (2 * t1.val + 1) (2 * k.val)) (offF fl (wL L).val (2 * t1.val + 1) (2 * k.val)) 2 24 :=
        acc_step d L fl tab (wL L).val (2 * t1.val + 1) (2 * k.val) 0 _ hRA ⟨23, by decide⟩ ⟨2, by decide⟩ _ rfl _ hw_v1919_1 _ (k1_off73_form ..) _ hc16
      have s_A2_24 : addf (AccMath.accVec (rowF fl tab (wL L).val (2 * t1.val + 1) (2 * k.val)) (offF fl (wL L).val (2 * t1.val + 1) (2 * k.val)) 2 24) (shapeCast S16 (pair1_lt.sl.v1977_1 d L tab k r g1 g2 hR hin) hc16) = AccMath.accVec (rowF fl tab (wL L).val (2 * t1.val + 1) (2 * k.val)) (offF fl (wL L).val (2 * t1.val + 1) (2 * k.val)) 2 25 :=
        acc_step d L fl tab (wL L).val (2 * t1.val + 1) (2 * k.val) 0 _ hRA ⟨24, by decide⟩ ⟨2, by decide⟩ _ rfl _ hw_v1955_1 _ (k1_off74_form ..) _ hc16
      have s_A2_25 : addf (AccMath.accVec (rowF fl tab (wL L).val (2 * t1.val + 1) (2 * k.val)) (offF fl (wL L).val (2 * t1.val + 1) (2 * k.val)) 2 25) (shapeCast S16 (pair1_lt.sl.v2013_1 d L tab k r g1 g2 hR hin) hc16) = AccMath.accVec (rowF fl tab (wL L).val (2 * t1.val + 1) (2 * k.val)) (offF fl (wL L).val (2 * t1.val + 1) (2 * k.val)) 2 26 :=
        acc_step d L fl tab (wL L).val (2 * t1.val + 1) (2 * k.val) 0 _ hRA ⟨25, by decide⟩ ⟨2, by decide⟩ _ rfl _ hw_v1991_1 _ (k1_off75_form ..) _ hc16
      have s_A2_26 : addf (AccMath.accVec (rowF fl tab (wL L).val (2 * t1.val + 1) (2 * k.val)) (offF fl (wL L).val (2 * t1.val + 1) (2 * k.val)) 2 26) (shapeCast S16 (pair1_lt.sl.v2049_1 d L tab k r g1 g2 hR hin) hc16) = AccMath.accVec (rowF fl tab (wL L).val (2 * t1.val + 1) (2 * k.val)) (offF fl (wL L).val (2 * t1.val + 1) (2 * k.val)) 2 27 :=
        acc_step d L fl tab (wL L).val (2 * t1.val + 1) (2 * k.val) 0 _ hRA ⟨26, by decide⟩ ⟨2, by decide⟩ _ rfl _ hw_v2027_1 _ (k1_off76_form ..) _ hc16
      have s_A2_27 : addf (AccMath.accVec (rowF fl tab (wL L).val (2 * t1.val + 1) (2 * k.val)) (offF fl (wL L).val (2 * t1.val + 1) (2 * k.val)) 2 27) (shapeCast S16 (pair1_lt.sl.v2085_1 d L tab k r g1 g2 hR hin) hc16) = AccMath.accVec (rowF fl tab (wL L).val (2 * t1.val + 1) (2 * k.val)) (offF fl (wL L).val (2 * t1.val + 1) (2 * k.val)) 2 28 :=
        acc_step d L fl tab (wL L).val (2 * t1.val + 1) (2 * k.val) 0 _ hRA ⟨27, by decide⟩ ⟨2, by decide⟩ _ rfl _ hw_v2063_1 _ (k1_off77_form ..) _ hc16
      have s_A2_28 : addf (AccMath.accVec (rowF fl tab (wL L).val (2 * t1.val + 1) (2 * k.val)) (offF fl (wL L).val (2 * t1.val + 1) (2 * k.val)) 2 28) (shapeCast S16 (pair1_lt.sl.v2121_1 d L tab k r g1 g2 hR hin) hc16) = AccMath.accVec (rowF fl tab (wL L).val (2 * t1.val + 1) (2 * k.val)) (offF fl (wL L).val (2 * t1.val + 1) (2 * k.val)) 2 29 :=
        acc_step d L fl tab (wL L).val (2 * t1.val + 1) (2 * k.val) 0 _ hRA ⟨28, by decide⟩ ⟨2, by decide⟩ _ rfl _ hw_v2099_1 _ (k1_off78_form ..) _ hc16
      have s_A2_29 : addf (AccMath.accVec (rowF fl tab (wL L).val (2 * t1.val + 1) (2 * k.val)) (offF fl (wL L).val (2 * t1.val + 1) (2 * k.val)) 2 29) (shapeCast S16 (pair1_lt.sl.v2157_1 d L tab k r g1 g2 hR hin) hc16) = AccMath.accVec (rowF fl tab (wL L).val (2 * t1.val + 1) (2 * k.val)) (offF fl (wL L).val (2 * t1.val + 1) (2 * k.val)) 2 30 :=
        acc_step d L fl tab (wL L).val (2 * t1.val + 1) (2 * k.val) 0 _ hRA ⟨29, by decide⟩ ⟨2, by decide⟩ _ rfl _ hw_v2135_1 _ (k1_off79_form ..) _ hc16
      have s_A2_30 : addf (AccMath.accVec (rowF fl tab (wL L).val (2 * t1.val + 1) (2 * k.val)) (offF fl (wL L).val (2 * t1.val + 1) (2 * k.val)) 2 30) (shapeCast S16 (pair1_lt.sl.v2193_1 d L tab k r g1 g2 hR hin) hc16) = AccMath.accVec (rowF fl tab (wL L).val (2 * t1.val + 1) (2 * k.val)) (offF fl (wL L).val (2 * t1.val + 1) (2 * k.val)) 2 31 :=
        acc_step d L fl tab (wL L).val (2 * t1.val + 1) (2 * k.val) 0 _ hRA ⟨30, by decide⟩ ⟨2, by decide⟩ _ rfl _ hw_v2171_1 _ (k1_off80_form ..) _ hc16
      have s_A2_31 : addf (AccMath.accVec (rowF fl tab (wL L).val (2 * t1.val + 1) (2 * k.val)) (offF fl (wL L).val (2 * t1.val + 1) (2 * k.val)) 2 31) (shapeCast S16 (pair1_lt.sl.v2229_1 d L tab k r g1 g2 hR hin) hc16) = AccMath.accVec (rowF fl tab (wL L).val (2 * t1.val + 1) (2 * k.val)) (offF fl (wL L).val (2 * t1.val + 1) (2 * k.val)) 2 32 :=
        acc_step d L fl tab (wL L).val (2 * t1.val + 1) (2 * k.val) 0 _ hRA ⟨31, by decide⟩ ⟨2, by decide⟩ _ rfl _ hw_v2207_1 _ (k1_off81_form ..) _ hc16
      have s_A2_32 : addf (AccMath.accVec (rowF fl tab (wL L).val (2 * t1.val + 1) (2 * k.val)) (offF fl (wL L).val (2 * t1.val + 1) (2 * k.val)) 2 32) (shapeCast S16 (pair1_lt.sl.v1689_2 d L tab k r g1 g2 hR hin) hc16) = AccMath.accVec (rowF fl tab (wL L).val (2 * t1.val + 1) (2 * k.val)) (offF fl (wL L).val (2 * t1.val + 1) (2 * k.val)) 2 33 :=
        acc_step d L fl tab (wL L).val (2 * t1.val + 1) (2 * k.val) 0 _ hRA ⟨32, by decide⟩ ⟨2, by decide⟩ _ rfl _ hw_v1667_2 _ (k1_off66_form ..) _ hc16
      have s_A2_33 : addf (AccMath.accVec (rowF fl tab (wL L).val (2 * t1.val + 1) (2 * k.val)) (offF fl (wL L).val (2 * t1.val + 1) (2 * k.val)) 2 33) (shapeCast S16 (pair1_lt.sl.v1725_2 d L tab k r g1 g2 hR hin) hc16) = AccMath.accVec (rowF fl tab (wL L).val (2 * t1.val + 1) (2 * k.val)) (offF fl (wL L).val (2 * t1.val + 1) (2 * k.val)) 2 34 :=
        acc_step d L fl tab (wL L).val (2 * t1.val + 1) (2 * k.val) 0 _ hRA ⟨33, by decide⟩ ⟨2, by decide⟩ _ rfl _ hw_v1703_2 _ (k1_off67_form ..) _ hc16
      have s_A2_34 : addf (AccMath.accVec (rowF fl tab (wL L).val (2 * t1.val + 1) (2 * k.val)) (offF fl (wL L).val (2 * t1.val + 1) (2 * k.val)) 2 34) (shapeCast S16 (pair1_lt.sl.v1761_2 d L tab k r g1 g2 hR hin) hc16) = AccMath.accVec (rowF fl tab (wL L).val (2 * t1.val + 1) (2 * k.val)) (offF fl (wL L).val (2 * t1.val + 1) (2 * k.val)) 2 35 :=
        acc_step d L fl tab (wL L).val (2 * t1.val + 1) (2 * k.val) 0 _ hRA ⟨34, by decide⟩ ⟨2, by decide⟩ _ rfl _ hw_v1739_2 _ (k1_off68_form ..) _ hc16
      have s_A2_35 : addf (AccMath.accVec (rowF fl tab (wL L).val (2 * t1.val + 1) (2 * k.val)) (offF fl (wL L).val (2 * t1.val + 1) (2 * k.val)) 2 35) (shapeCast S16 (pair1_lt.sl.v1797_2 d L tab k r g1 g2 hR hin) hc16) = AccMath.accVec (rowF fl tab (wL L).val (2 * t1.val + 1) (2 * k.val)) (offF fl (wL L).val (2 * t1.val + 1) (2 * k.val)) 2 36 :=
        acc_step d L fl tab (wL L).val (2 * t1.val + 1) (2 * k.val) 0 _ hRA ⟨35, by decide⟩ ⟨2, by decide⟩ _ rfl _ hw_v1775_2 _ (k1_off69_form ..) _ hc16
      have s_A2_36 : addf (AccMath.accVec (rowF fl tab (wL L).val (2 * t1.val + 1) (2 * k.val)) (offF fl (wL L).val (2 * t1.val + 1) (2 * k.val)) 2 36) (shapeCast S16 (pair1_lt.sl.v1833_2 d L tab k r g1 g2 hR hin) hc16) = AccMath.accVec (rowF fl tab (wL L).val (2 * t1.val + 1) (2 * k.val)) (offF fl (wL L).val (2 * t1.val + 1) (2 * k.val)) 2 37 :=
        acc_step d L fl tab (wL L).val (2 * t1.val + 1) (2 * k.val) 0 _ hRA ⟨36, by decide⟩ ⟨2, by decide⟩ _ rfl _ hw_v1811_2 _ (k1_off70_form ..) _ hc16
      have s_A2_37 : addf (AccMath.accVec (rowF fl tab (wL L).val (2 * t1.val + 1) (2 * k.val)) (offF fl (wL L).val (2 * t1.val + 1) (2 * k.val)) 2 37) (shapeCast S16 (pair1_lt.sl.v1869_2 d L tab k r g1 g2 hR hin) hc16) = AccMath.accVec (rowF fl tab (wL L).val (2 * t1.val + 1) (2 * k.val)) (offF fl (wL L).val (2 * t1.val + 1) (2 * k.val)) 2 38 :=
        acc_step d L fl tab (wL L).val (2 * t1.val + 1) (2 * k.val) 0 _ hRA ⟨37, by decide⟩ ⟨2, by decide⟩ _ rfl _ hw_v1847_2 _ (k1_off71_form ..) _ hc16
      have s_A2_38 : addf (AccMath.accVec (rowF fl tab (wL L).val (2 * t1.val + 1) (2 * k.val)) (offF fl (wL L).val (2 * t1.val + 1) (2 * k.val)) 2 38) (shapeCast S16 (pair1_lt.sl.v1905_2 d L tab k r g1 g2 hR hin) hc16) = AccMath.accVec (rowF fl tab (wL L).val (2 * t1.val + 1) (2 * k.val)) (offF fl (wL L).val (2 * t1.val + 1) (2 * k.val)) 2 39 :=
        acc_step d L fl tab (wL L).val (2 * t1.val + 1) (2 * k.val) 0 _ hRA ⟨38, by decide⟩ ⟨2, by decide⟩ _ rfl _ hw_v1883_2 _ (k1_off72_form ..) _ hc16
      have s_A2_39 : addf (AccMath.accVec (rowF fl tab (wL L).val (2 * t1.val + 1) (2 * k.val)) (offF fl (wL L).val (2 * t1.val + 1) (2 * k.val)) 2 39) (shapeCast S16 (pair1_lt.sl.v1941_2 d L tab k r g1 g2 hR hin) hc16) = AccMath.accVec (rowF fl tab (wL L).val (2 * t1.val + 1) (2 * k.val)) (offF fl (wL L).val (2 * t1.val + 1) (2 * k.val)) 2 40 :=
        acc_step d L fl tab (wL L).val (2 * t1.val + 1) (2 * k.val) 0 _ hRA ⟨39, by decide⟩ ⟨2, by decide⟩ _ rfl _ hw_v1919_2 _ (k1_off73_form ..) _ hc16
      have s_A2_40 : addf (AccMath.accVec (rowF fl tab (wL L).val (2 * t1.val + 1) (2 * k.val)) (offF fl (wL L).val (2 * t1.val + 1) (2 * k.val)) 2 40) (shapeCast S16 (pair1_lt.sl.v1977_2 d L tab k r g1 g2 hR hin) hc16) = AccMath.accVec (rowF fl tab (wL L).val (2 * t1.val + 1) (2 * k.val)) (offF fl (wL L).val (2 * t1.val + 1) (2 * k.val)) 2 41 :=
        acc_step d L fl tab (wL L).val (2 * t1.val + 1) (2 * k.val) 0 _ hRA ⟨40, by decide⟩ ⟨2, by decide⟩ _ rfl _ hw_v1955_2 _ (k1_off74_form ..) _ hc16
      have s_A2_41 : addf (AccMath.accVec (rowF fl tab (wL L).val (2 * t1.val + 1) (2 * k.val)) (offF fl (wL L).val (2 * t1.val + 1) (2 * k.val)) 2 41) (shapeCast S16 (pair1_lt.sl.v2013_2 d L tab k r g1 g2 hR hin) hc16) = AccMath.accVec (rowF fl tab (wL L).val (2 * t1.val + 1) (2 * k.val)) (offF fl (wL L).val (2 * t1.val + 1) (2 * k.val)) 2 42 :=
        acc_step d L fl tab (wL L).val (2 * t1.val + 1) (2 * k.val) 0 _ hRA ⟨41, by decide⟩ ⟨2, by decide⟩ _ rfl _ hw_v1991_2 _ (k1_off75_form ..) _ hc16
      have s_A2_42 : addf (AccMath.accVec (rowF fl tab (wL L).val (2 * t1.val + 1) (2 * k.val)) (offF fl (wL L).val (2 * t1.val + 1) (2 * k.val)) 2 42) (shapeCast S16 (pair1_lt.sl.v2049_2 d L tab k r g1 g2 hR hin) hc16) = AccMath.accVec (rowF fl tab (wL L).val (2 * t1.val + 1) (2 * k.val)) (offF fl (wL L).val (2 * t1.val + 1) (2 * k.val)) 2 43 :=
        acc_step d L fl tab (wL L).val (2 * t1.val + 1) (2 * k.val) 0 _ hRA ⟨42, by decide⟩ ⟨2, by decide⟩ _ rfl _ hw_v2027_2 _ (k1_off76_form ..) _ hc16
      have s_A2_43 : addf (AccMath.accVec (rowF fl tab (wL L).val (2 * t1.val + 1) (2 * k.val)) (offF fl (wL L).val (2 * t1.val + 1) (2 * k.val)) 2 43) (shapeCast S16 (pair1_lt.sl.v2085_2 d L tab k r g1 g2 hR hin) hc16) = AccMath.accVec (rowF fl tab (wL L).val (2 * t1.val + 1) (2 * k.val)) (offF fl (wL L).val (2 * t1.val + 1) (2 * k.val)) 2 44 :=
        acc_step d L fl tab (wL L).val (2 * t1.val + 1) (2 * k.val) 0 _ hRA ⟨43, by decide⟩ ⟨2, by decide⟩ _ rfl _ hw_v2063_2 _ (k1_off77_form ..) _ hc16
      have s_A2_44 : addf (AccMath.accVec (rowF fl tab (wL L).val (2 * t1.val + 1) (2 * k.val)) (offF fl (wL L).val (2 * t1.val + 1) (2 * k.val)) 2 44) (shapeCast S16 (pair1_lt.sl.v2121_2 d L tab k r g1 g2 hR hin) hc16) = AccMath.accVec (rowF fl tab (wL L).val (2 * t1.val + 1) (2 * k.val)) (offF fl (wL L).val (2 * t1.val + 1) (2 * k.val)) 2 45 :=
        acc_step d L fl tab (wL L).val (2 * t1.val + 1) (2 * k.val) 0 _ hRA ⟨44, by decide⟩ ⟨2, by decide⟩ _ rfl _ hw_v2099_2 _ (k1_off78_form ..) _ hc16
      have s_A2_45 : addf (AccMath.accVec (rowF fl tab (wL L).val (2 * t1.val + 1) (2 * k.val)) (offF fl (wL L).val (2 * t1.val + 1) (2 * k.val)) 2 45) (shapeCast S16 (pair1_lt.sl.v2157_2 d L tab k r g1 g2 hR hin) hc16) = AccMath.accVec (rowF fl tab (wL L).val (2 * t1.val + 1) (2 * k.val)) (offF fl (wL L).val (2 * t1.val + 1) (2 * k.val)) 2 46 :=
        acc_step d L fl tab (wL L).val (2 * t1.val + 1) (2 * k.val) 0 _ hRA ⟨45, by decide⟩ ⟨2, by decide⟩ _ rfl _ hw_v2135_2 _ (k1_off79_form ..) _ hc16
      have s_A2_46 : addf (AccMath.accVec (rowF fl tab (wL L).val (2 * t1.val + 1) (2 * k.val)) (offF fl (wL L).val (2 * t1.val + 1) (2 * k.val)) 2 46) (shapeCast S16 (pair1_lt.sl.v2193_2 d L tab k r g1 g2 hR hin) hc16) = AccMath.accVec (rowF fl tab (wL L).val (2 * t1.val + 1) (2 * k.val)) (offF fl (wL L).val (2 * t1.val + 1) (2 * k.val)) 2 47 :=
        acc_step d L fl tab (wL L).val (2 * t1.val + 1) (2 * k.val) 0 _ hRA ⟨46, by decide⟩ ⟨2, by decide⟩ _ rfl _ hw_v2171_2 _ (k1_off80_form ..) _ hc16
      have s_A2_47 : addf (AccMath.accVec (rowF fl tab (wL L).val (2 * t1.val + 1) (2 * k.val)) (offF fl (wL L).val (2 * t1.val + 1) (2 * k.val)) 2 47) (shapeCast S16 (pair1_lt.sl.v2229_2 d L tab k r g1 g2 hR hin) hc16) = AccMath.accVec (rowF fl tab (wL L).val (2 * t1.val + 1) (2 * k.val)) (offF fl (wL L).val (2 * t1.val + 1) (2 * k.val)) 2 48 :=
        acc_step d L fl tab (wL L).val (2 * t1.val + 1) (2 * k.val) 0 _ hRA ⟨47, by decide⟩ ⟨2, by decide⟩ _ rfl _ hw_v2207_2 _ (k1_off81_form ..) _ hc16
      have s_A2_48 : addf (AccMath.accVec (rowF fl tab (wL L).val (2 * t1.val + 1) (2 * k.val)) (offF fl (wL L).val (2 * t1.val + 1) (2 * k.val)) 2 48) (shapeCast S16 (pair1_lt.sl.v1478 d L tab k r g1 g2 hR hin) hc16) = AccMath.accVec (rowF fl tab (wL L).val (2 * t1.val + 1) (2 * k.val)) (offF fl (wL L).val (2 * t1.val + 1) (2 * k.val)) 2 49 :=
        acc_step d L fl tab (wL L).val (2 * t1.val + 1) (2 * k.val) 0 _ hRA ⟨48, by decide⟩ ⟨2, by decide⟩ _ rfl _ hw_v1456 _ (k1_off83_form ..) _ hc16
      have s_A2_49 : addf (AccMath.accVec (rowF fl tab (wL L).val (2 * t1.val + 1) (2 * k.val)) (offF fl (wL L).val (2 * t1.val + 1) (2 * k.val)) 2 49) (shapeCast S16 (pair1_lt.sl.v1512 d L tab k r g1 g2 hR hin) hc16) = AccMath.accVec (rowF fl tab (wL L).val (2 * t1.val + 1) (2 * k.val)) (offF fl (wL L).val (2 * t1.val + 1) (2 * k.val)) 2 50 :=
        acc_step d L fl tab (wL L).val (2 * t1.val + 1) (2 * k.val) 0 _ hRA ⟨49, by decide⟩ ⟨2, by decide⟩ _ rfl _ hw_v1490 _ (k1_off84_form ..) _ hc16
      have hP_A2 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val)) (offF fl (wL L).val (2 * t1.val + 1) (2 * k.val)) 2 0) (shapeCast S16 (pair1_lt.sl.v1689 d L tab k r g1 g2 hR hin) hc16)) (shapeCast S16 (pair1_lt.sl.v1725 d L tab k r g1 g2 hR hin) hc16)) (shapeCast S16 (pair1_lt.sl.v1761 d L tab k r g1 g2 hR hin) hc16)) (shapeCast S16 (pair1_lt.sl.v1797 d L tab k r g1 g2 hR hin) hc16)) (shapeCast S16 (pair1_lt.sl.v1833 d L tab k r g1 g2 hR hin) hc16)) (shapeCast S16 (pair1_lt.sl.v1869 d L tab k r g1 g2 hR hin) hc16)) (shapeCast S16 (pair1_lt.sl.v1905 d L tab k r g1 g2 hR hin) hc16)) (shapeCast S16 (pair1_lt.sl.v1941 d L tab k r g1 g2 hR hin) hc16)) (shapeCast S16 (pair1_lt.sl.v1977 d L tab k r g1 g2 hR hin) hc16)) (shapeCast S16 (pair1_lt.sl.v2013 d L tab k r g1 g2 hR hin) hc16)) (shapeCast S16 (pair1_lt.sl.v2049 d L tab k r g1 g2 hR hin) hc16)) (shapeCast S16 (pair1_lt.sl.v2085 d L tab k r g1 g2 hR hin) hc16)) (shapeCast S16 (pair1_lt.sl.v2121 d L tab k r g1 g2 hR hin) hc16)) (shapeCast S16 (pair1_lt.sl.v2157 d L tab k r g1 g2 hR hin) hc16)) (shapeCast S16 (pair1_lt.sl.v2193 d L tab k r g1 g2 hR hin) hc16)) (shapeCast S16 (pair1_lt.sl.v2229 d L tab k r g1 g2 hR hin) hc16)) (shapeCast S16 (pair1_lt.sl.v1689_1 d L tab k r g1 g2 hR hin) hc16)) (shapeCast S16 (pair1_lt.sl.v1725_1 d L tab k r g1 g2 hR hin) hc16)) (shapeCast S16 (pair1_lt.sl.v1761_1 d L tab k r g1 g2 hR hin) hc16)) (shapeCast S16 (pair1_lt.sl.v1797_1 d L tab k r g1 g2 hR hin) hc16)) (shapeCast S16 (pair1_lt.sl.v1833_1 d L tab k r g1 g2 hR hin) hc16)) (shapeCast S16 (pair1_lt.sl.v1869_1 d L tab k r g1 g2 hR hin) hc16)) (shapeCast S16 (pair1_lt.sl.v1905_1 d L tab k r g1 g2 hR hin) hc16)) (shapeCast S16 (pair1_lt.sl.v1941_1 d L tab k r g1 g2 hR hin) hc16)) (shapeCast S16 (pair1_lt.sl.v1977_1 d L tab k r g1 g2 hR hin) hc16)) (shapeCast S16 (pair1_lt.sl.v2013_1 d L tab k r g1 g2 hR hin) hc16)) (shapeCast S16 (pair1_lt.sl.v2049_1 d L tab k r g1 g2 hR hin) hc16)) (shapeCast S16 (pair1_lt.sl.v2085_1 d L tab k r g1 g2 hR hin) hc16)) (shapeCast S16 (pair1_lt.sl.v2121_1 d L tab k r g1 g2 hR hin) hc16)) (shapeCast S16 (pair1_lt.sl.v2157_1 d L tab k r g1 g2 hR hin) hc16)) (shapeCast S16 (pair1_lt.sl.v2193_1 d L tab k r g1 g2 hR hin) hc16)) (shapeCast S16 (pair1_lt.sl.v2229_1 d L tab k r g1 g2 hR hin) hc16)) (shapeCast S16 (pair1_lt.sl.v1689_2 d L tab k r g1 g2 hR hin) hc16)) (shapeCast S16 (pair1_lt.sl.v1725_2 d L tab k r g1 g2 hR hin) hc16)) (shapeCast S16 (pair1_lt.sl.v1761_2 d L tab k r g1 g2 hR hin) hc16)) (shapeCast S16 (pair1_lt.sl.v1797_2 d L tab k r g1 g2 hR hin) hc16)) (shapeCast S16 (pair1_lt.sl.v1833_2 d L tab k r g1 g2 hR hin) hc16)) (shapeCast S16 (pair1_lt.sl.v1869_2 d L tab k r g1 g2 hR hin) hc16)) (shapeCast S16 (pair1_lt.sl.v1905_2 d L tab k r g1 g2 hR hin) hc16)) (shapeCast S16 (pair1_lt.sl.v1941_2 d L tab k r g1 g2 hR hin) hc16)) (shapeCast S16 (pair1_lt.sl.v1977_2 d L tab k r g1 g2 hR hin) hc16)) (shapeCast S16 (pair1_lt.sl.v2013_2 d L tab k r g1 g2 hR hin) hc16)) (shapeCast S16 (pair1_lt.sl.v2049_2 d L tab k r g1 g2 hR hin) hc16)) (shapeCast S16 (pair1_lt.sl.v2085_2 d L tab k r g1 g2 hR hin) hc16)) (shapeCast S16 (pair1_lt.sl.v2121_2 d L tab k r g1 g2 hR hin) hc16)) (shapeCast S16 (pair1_lt.sl.v2157_2 d L tab k r g1 g2 hR hin) hc16)) (shapeCast S16 (pair1_lt.sl.v2193_2 d L tab k r g1 g2 hR hin) hc16)) (shapeCast S16 (pair1_lt.sl.v2229_2 d L tab k r g1 g2 hR hin) hc16)) (shapeCast S16 (pair1_lt.sl.v1478 d L tab k r g1 g2 hR hin) hc16)) (shapeCast S16 (pair1_lt.sl.v1512 d L tab k r g1 g2 hR hin) hc16)) hc1 x = Spec.bagPartial fl tab (128 * (wL L).val + 16 * (2 * t1.val + 1) + (2 * k.val)) (16 * 2 + (x 2).val) 50 := fun x => by
        rw [s_A2_0, s_A2_1, s_A2_2, s_A2_3, s_A2_4, s_A2_5, s_A2_6, s_A2_7, s_A2_8, s_A2_9, s_A2_10, s_A2_11, s_A2_12, s_A2_13, s_A2_14, s_A2_15, s_A2_16, s_A2_17, s_A2_18, s_A2_19, s_A2_20, s_A2_21, s_A2_22, s_A2_23, s_A2_24, s_A2_25, s_A2_26, s_A2_27, s_A2_28, s_A2_29, s_A2_30, s_A2_31, s_A2_32, s_A2_33, s_A2_34, s_A2_35, s_A2_36, s_A2_37, s_A2_38, s_A2_39, s_A2_40, s_A2_41, s_A2_42, s_A2_43, s_A2_44, s_A2_45, s_A2_46, s_A2_47, s_A2_48, s_A2_49]
        exact payload_ok fl tab (wL L).val (2 * t1.val + 1) (2 * k.val) ⟨2, by decide⟩ hc1 x
      have s_A3_0 : addf (AccMath.accVec (rowF fl tab (wL L).val (2 * t1.val + 1) (2 * k.val)) (offF fl (wL L).val (2 * t1.val + 1) (2 * k.val)) 3 0) (shapeCast S16 (pair1_lt.sl.v1697 d L tab k r g1 g2 hR hin) hc16) = AccMath.accVec (rowF fl tab (wL L).val (2 * t1.val + 1) (2 * k.val)) (offF fl (wL L).val (2 * t1.val + 1) (2 * k.val)) 3 1 :=
        acc_step d L fl tab (wL L).val (2 * t1.val + 1) (2 * k.val) 0 _ hRA ⟨0, by decide⟩ ⟨3, by decide⟩ _ rfl _ hw_v1667 _ (k1_off66_form ..) _ hc16
      have s_A3_1 : addf (AccMath.accVec (rowF fl tab (wL L).val (2 * t1.val + 1) (2 * k.val)) (offF fl (wL L).val (2 * t1.val + 1) (2 * k.val)) 3 1) (shapeCast S16 (pair1_lt.sl.v1733 d L tab k r g1 g2 hR hin) hc16) = AccMath.accVec (rowF fl tab (wL L).val (2 * t1.val + 1) (2 * k.val)) (offF fl (wL L).val (2 * t1.val + 1) (2 * k.val)) 3 2 :=
        acc_step d L fl tab (wL L).val (2 * t1.val + 1) (2 * k.val) 0 _ hRA ⟨1, by decide⟩ ⟨3, by decide⟩ _ rfl _ hw_v1703 _ (k1_off67_form ..) _ hc16
      have s_A3_2 : addf (AccMath.accVec (rowF fl tab (wL L).val (2 * t1.val + 1) (2 * k.val)) (offF fl (wL L).val (2 * t1.val + 1) (2 * k.val)) 3 2) (shapeCast S16 (pair1_lt.sl.v1769 d L tab k r g1 g2 hR hin) hc16) = AccMath.accVec (rowF fl tab (wL L).val (2 * t1.val + 1) (2 * k.val)) (offF fl (wL L).val (2 * t1.val + 1) (2 * k.val)) 3 3 :=
        acc_step d L fl tab (wL L).val (2 * t1.val + 1) (2 * k.val) 0 _ hRA ⟨2, by decide⟩ ⟨3, by decide⟩ _ rfl _ hw_v1739 _ (k1_off68_form ..) _ hc16
      have s_A3_3 : addf (AccMath.accVec (rowF fl tab (wL L).val (2 * t1.val + 1) (2 * k.val)) (offF fl (wL L).val (2 * t1.val + 1) (2 * k.val)) 3 3) (shapeCast S16 (pair1_lt.sl.v1805 d L tab k r g1 g2 hR hin) hc16) = AccMath.accVec (rowF fl tab (wL L).val (2 * t1.val + 1) (2 * k.val)) (offF fl (wL L).val (2 * t1.val + 1) (2 * k.val)) 3 4 :=
        acc_step d L fl tab (wL L).val (2 * t1.val + 1) (2 * k.val) 0 _ hRA ⟨3, by decide⟩ ⟨3, by decide⟩ _ rfl _ hw_v1775 _ (k1_off69_form ..) _ hc16
      have s_A3_4 : addf (AccMath.accVec (rowF fl tab (wL L).val (2 * t1.val + 1) (2 * k.val)) (offF fl (wL L).val (2 * t1.val + 1) (2 * k.val)) 3 4) (shapeCast S16 (pair1_lt.sl.v1841 d L tab k r g1 g2 hR hin) hc16) = AccMath.accVec (rowF fl tab (wL L).val (2 * t1.val + 1) (2 * k.val)) (offF fl (wL L).val (2 * t1.val + 1) (2 * k.val)) 3 5 :=
        acc_step d L fl tab (wL L).val (2 * t1.val + 1) (2 * k.val) 0 _ hRA ⟨4, by decide⟩ ⟨3, by decide⟩ _ rfl _ hw_v1811 _ (k1_off70_form ..) _ hc16
      have s_A3_5 : addf (AccMath.accVec (rowF fl tab (wL L).val (2 * t1.val + 1) (2 * k.val)) (offF fl (wL L).val (2 * t1.val + 1) (2 * k.val)) 3 5) (shapeCast S16 (pair1_lt.sl.v1877 d L tab k r g1 g2 hR hin) hc16) = AccMath.accVec (rowF fl tab (wL L).val (2 * t1.val + 1) (2 * k.val)) (offF fl (wL L).val (2 * t1.val + 1) (2 * k.val)) 3 6 :=
        acc_step d L fl tab (wL L).val (2 * t1.val + 1) (2 * k.val) 0 _ hRA ⟨5, by decide⟩ ⟨3, by decide⟩ _ rfl _ hw_v1847 _ (k1_off71_form ..) _ hc16
      have s_A3_6 : addf (AccMath.accVec (rowF fl tab (wL L).val (2 * t1.val + 1) (2 * k.val)) (offF fl (wL L).val (2 * t1.val + 1) (2 * k.val)) 3 6) (shapeCast S16 (pair1_lt.sl.v1913 d L tab k r g1 g2 hR hin) hc16) = AccMath.accVec (rowF fl tab (wL L).val (2 * t1.val + 1) (2 * k.val)) (offF fl (wL L).val (2 * t1.val + 1) (2 * k.val)) 3 7 :=
        acc_step d L fl tab (wL L).val (2 * t1.val + 1) (2 * k.val) 0 _ hRA ⟨6, by decide⟩ ⟨3, by decide⟩ _ rfl _ hw_v1883 _ (k1_off72_form ..) _ hc16
      have s_A3_7 : addf (AccMath.accVec (rowF fl tab (wL L).val (2 * t1.val + 1) (2 * k.val)) (offF fl (wL L).val (2 * t1.val + 1) (2 * k.val)) 3 7) (shapeCast S16 (pair1_lt.sl.v1949 d L tab k r g1 g2 hR hin) hc16) = AccMath.accVec (rowF fl tab (wL L).val (2 * t1.val + 1) (2 * k.val)) (offF fl (wL L).val (2 * t1.val + 1) (2 * k.val)) 3 8 :=
        acc_step d L fl tab (wL L).val (2 * t1.val + 1) (2 * k.val) 0 _ hRA ⟨7, by decide⟩ ⟨3, by decide⟩ _ rfl _ hw_v1919 _ (k1_off73_form ..) _ hc16
      have s_A3_8 : addf (AccMath.accVec (rowF fl tab (wL L).val (2 * t1.val + 1) (2 * k.val)) (offF fl (wL L).val (2 * t1.val + 1) (2 * k.val)) 3 8) (shapeCast S16 (pair1_lt.sl.v1985 d L tab k r g1 g2 hR hin) hc16) = AccMath.accVec (rowF fl tab (wL L).val (2 * t1.val + 1) (2 * k.val)) (offF fl (wL L).val (2 * t1.val + 1) (2 * k.val)) 3 9 :=
        acc_step d L fl tab (wL L).val (2 * t1.val + 1) (2 * k.val) 0 _ hRA ⟨8, by decide⟩ ⟨3, by decide⟩ _ rfl _ hw_v1955 _ (k1_off74_form ..) _ hc16
      have s_A3_9 : addf (AccMath.accVec (rowF fl tab (wL L).val (2 * t1.val + 1) (2 * k.val)) (offF fl (wL L).val (2 * t1.val + 1) (2 * k.val)) 3 9) (shapeCast S16 (pair1_lt.sl.v2021 d L tab k r g1 g2 hR hin) hc16) = AccMath.accVec (rowF fl tab (wL L).val (2 * t1.val + 1) (2 * k.val)) (offF fl (wL L).val (2 * t1.val + 1) (2 * k.val)) 3 10 :=
        acc_step d L fl tab (wL L).val (2 * t1.val + 1) (2 * k.val) 0 _ hRA ⟨9, by decide⟩ ⟨3, by decide⟩ _ rfl _ hw_v1991 _ (k1_off75_form ..) _ hc16
      have s_A3_10 : addf (AccMath.accVec (rowF fl tab (wL L).val (2 * t1.val + 1) (2 * k.val)) (offF fl (wL L).val (2 * t1.val + 1) (2 * k.val)) 3 10) (shapeCast S16 (pair1_lt.sl.v2057 d L tab k r g1 g2 hR hin) hc16) = AccMath.accVec (rowF fl tab (wL L).val (2 * t1.val + 1) (2 * k.val)) (offF fl (wL L).val (2 * t1.val + 1) (2 * k.val)) 3 11 :=
        acc_step d L fl tab (wL L).val (2 * t1.val + 1) (2 * k.val) 0 _ hRA ⟨10, by decide⟩ ⟨3, by decide⟩ _ rfl _ hw_v2027 _ (k1_off76_form ..) _ hc16
      have s_A3_11 : addf (AccMath.accVec (rowF fl tab (wL L).val (2 * t1.val + 1) (2 * k.val)) (offF fl (wL L).val (2 * t1.val + 1) (2 * k.val)) 3 11) (shapeCast S16 (pair1_lt.sl.v2093 d L tab k r g1 g2 hR hin) hc16) = AccMath.accVec (rowF fl tab (wL L).val (2 * t1.val + 1) (2 * k.val)) (offF fl (wL L).val (2 * t1.val + 1) (2 * k.val)) 3 12 :=
        acc_step d L fl tab (wL L).val (2 * t1.val + 1) (2 * k.val) 0 _ hRA ⟨11, by decide⟩ ⟨3, by decide⟩ _ rfl _ hw_v2063 _ (k1_off77_form ..) _ hc16
      have s_A3_12 : addf (AccMath.accVec (rowF fl tab (wL L).val (2 * t1.val + 1) (2 * k.val)) (offF fl (wL L).val (2 * t1.val + 1) (2 * k.val)) 3 12) (shapeCast S16 (pair1_lt.sl.v2129 d L tab k r g1 g2 hR hin) hc16) = AccMath.accVec (rowF fl tab (wL L).val (2 * t1.val + 1) (2 * k.val)) (offF fl (wL L).val (2 * t1.val + 1) (2 * k.val)) 3 13 :=
        acc_step d L fl tab (wL L).val (2 * t1.val + 1) (2 * k.val) 0 _ hRA ⟨12, by decide⟩ ⟨3, by decide⟩ _ rfl _ hw_v2099 _ (k1_off78_form ..) _ hc16
      have s_A3_13 : addf (AccMath.accVec (rowF fl tab (wL L).val (2 * t1.val + 1) (2 * k.val)) (offF fl (wL L).val (2 * t1.val + 1) (2 * k.val)) 3 13) (shapeCast S16 (pair1_lt.sl.v2165 d L tab k r g1 g2 hR hin) hc16) = AccMath.accVec (rowF fl tab (wL L).val (2 * t1.val + 1) (2 * k.val)) (offF fl (wL L).val (2 * t1.val + 1) (2 * k.val)) 3 14 :=
        acc_step d L fl tab (wL L).val (2 * t1.val + 1) (2 * k.val) 0 _ hRA ⟨13, by decide⟩ ⟨3, by decide⟩ _ rfl _ hw_v2135 _ (k1_off79_form ..) _ hc16
      have s_A3_14 : addf (AccMath.accVec (rowF fl tab (wL L).val (2 * t1.val + 1) (2 * k.val)) (offF fl (wL L).val (2 * t1.val + 1) (2 * k.val)) 3 14) (shapeCast S16 (pair1_lt.sl.v2201 d L tab k r g1 g2 hR hin) hc16) = AccMath.accVec (rowF fl tab (wL L).val (2 * t1.val + 1) (2 * k.val)) (offF fl (wL L).val (2 * t1.val + 1) (2 * k.val)) 3 15 :=
        acc_step d L fl tab (wL L).val (2 * t1.val + 1) (2 * k.val) 0 _ hRA ⟨14, by decide⟩ ⟨3, by decide⟩ _ rfl _ hw_v2171 _ (k1_off80_form ..) _ hc16
      have s_A3_15 : addf (AccMath.accVec (rowF fl tab (wL L).val (2 * t1.val + 1) (2 * k.val)) (offF fl (wL L).val (2 * t1.val + 1) (2 * k.val)) 3 15) (shapeCast S16 (pair1_lt.sl.v2237 d L tab k r g1 g2 hR hin) hc16) = AccMath.accVec (rowF fl tab (wL L).val (2 * t1.val + 1) (2 * k.val)) (offF fl (wL L).val (2 * t1.val + 1) (2 * k.val)) 3 16 :=
        acc_step d L fl tab (wL L).val (2 * t1.val + 1) (2 * k.val) 0 _ hRA ⟨15, by decide⟩ ⟨3, by decide⟩ _ rfl _ hw_v2207 _ (k1_off81_form ..) _ hc16
      have s_A3_16 : addf (AccMath.accVec (rowF fl tab (wL L).val (2 * t1.val + 1) (2 * k.val)) (offF fl (wL L).val (2 * t1.val + 1) (2 * k.val)) 3 16) (shapeCast S16 (pair1_lt.sl.v1697_1 d L tab k r g1 g2 hR hin) hc16) = AccMath.accVec (rowF fl tab (wL L).val (2 * t1.val + 1) (2 * k.val)) (offF fl (wL L).val (2 * t1.val + 1) (2 * k.val)) 3 17 :=
        acc_step d L fl tab (wL L).val (2 * t1.val + 1) (2 * k.val) 0 _ hRA ⟨16, by decide⟩ ⟨3, by decide⟩ _ rfl _ hw_v1667_1 _ (k1_off66_form ..) _ hc16
      have s_A3_17 : addf (AccMath.accVec (rowF fl tab (wL L).val (2 * t1.val + 1) (2 * k.val)) (offF fl (wL L).val (2 * t1.val + 1) (2 * k.val)) 3 17) (shapeCast S16 (pair1_lt.sl.v1733_1 d L tab k r g1 g2 hR hin) hc16) = AccMath.accVec (rowF fl tab (wL L).val (2 * t1.val + 1) (2 * k.val)) (offF fl (wL L).val (2 * t1.val + 1) (2 * k.val)) 3 18 :=
        acc_step d L fl tab (wL L).val (2 * t1.val + 1) (2 * k.val) 0 _ hRA ⟨17, by decide⟩ ⟨3, by decide⟩ _ rfl _ hw_v1703_1 _ (k1_off67_form ..) _ hc16
      have s_A3_18 : addf (AccMath.accVec (rowF fl tab (wL L).val (2 * t1.val + 1) (2 * k.val)) (offF fl (wL L).val (2 * t1.val + 1) (2 * k.val)) 3 18) (shapeCast S16 (pair1_lt.sl.v1769_1 d L tab k r g1 g2 hR hin) hc16) = AccMath.accVec (rowF fl tab (wL L).val (2 * t1.val + 1) (2 * k.val)) (offF fl (wL L).val (2 * t1.val + 1) (2 * k.val)) 3 19 :=
        acc_step d L fl tab (wL L).val (2 * t1.val + 1) (2 * k.val) 0 _ hRA ⟨18, by decide⟩ ⟨3, by decide⟩ _ rfl _ hw_v1739_1 _ (k1_off68_form ..) _ hc16
      have s_A3_19 : addf (AccMath.accVec (rowF fl tab (wL L).val (2 * t1.val + 1) (2 * k.val)) (offF fl (wL L).val (2 * t1.val + 1) (2 * k.val)) 3 19) (shapeCast S16 (pair1_lt.sl.v1805_1 d L tab k r g1 g2 hR hin) hc16) = AccMath.accVec (rowF fl tab (wL L).val (2 * t1.val + 1) (2 * k.val)) (offF fl (wL L).val (2 * t1.val + 1) (2 * k.val)) 3 20 :=
        acc_step d L fl tab (wL L).val (2 * t1.val + 1) (2 * k.val) 0 _ hRA ⟨19, by decide⟩ ⟨3, by decide⟩ _ rfl _ hw_v1775_1 _ (k1_off69_form ..) _ hc16
      have s_A3_20 : addf (AccMath.accVec (rowF fl tab (wL L).val (2 * t1.val + 1) (2 * k.val)) (offF fl (wL L).val (2 * t1.val + 1) (2 * k.val)) 3 20) (shapeCast S16 (pair1_lt.sl.v1841_1 d L tab k r g1 g2 hR hin) hc16) = AccMath.accVec (rowF fl tab (wL L).val (2 * t1.val + 1) (2 * k.val)) (offF fl (wL L).val (2 * t1.val + 1) (2 * k.val)) 3 21 :=
        acc_step d L fl tab (wL L).val (2 * t1.val + 1) (2 * k.val) 0 _ hRA ⟨20, by decide⟩ ⟨3, by decide⟩ _ rfl _ hw_v1811_1 _ (k1_off70_form ..) _ hc16
      have s_A3_21 : addf (AccMath.accVec (rowF fl tab (wL L).val (2 * t1.val + 1) (2 * k.val)) (offF fl (wL L).val (2 * t1.val + 1) (2 * k.val)) 3 21) (shapeCast S16 (pair1_lt.sl.v1877_1 d L tab k r g1 g2 hR hin) hc16) = AccMath.accVec (rowF fl tab (wL L).val (2 * t1.val + 1) (2 * k.val)) (offF fl (wL L).val (2 * t1.val + 1) (2 * k.val)) 3 22 :=
        acc_step d L fl tab (wL L).val (2 * t1.val + 1) (2 * k.val) 0 _ hRA ⟨21, by decide⟩ ⟨3, by decide⟩ _ rfl _ hw_v1847_1 _ (k1_off71_form ..) _ hc16
      have s_A3_22 : addf (AccMath.accVec (rowF fl tab (wL L).val (2 * t1.val + 1) (2 * k.val)) (offF fl (wL L).val (2 * t1.val + 1) (2 * k.val)) 3 22) (shapeCast S16 (pair1_lt.sl.v1913_1 d L tab k r g1 g2 hR hin) hc16) = AccMath.accVec (rowF fl tab (wL L).val (2 * t1.val + 1) (2 * k.val)) (offF fl (wL L).val (2 * t1.val + 1) (2 * k.val)) 3 23 :=
        acc_step d L fl tab (wL L).val (2 * t1.val + 1) (2 * k.val) 0 _ hRA ⟨22, by decide⟩ ⟨3, by decide⟩ _ rfl _ hw_v1883_1 _ (k1_off72_form ..) _ hc16
      have s_A3_23 : addf (AccMath.accVec (rowF fl tab (wL L).val (2 * t1.val + 1) (2 * k.val)) (offF fl (wL L).val (2 * t1.val + 1) (2 * k.val)) 3 23) (shapeCast S16 (pair1_lt.sl.v1949_1 d L tab k r g1 g2 hR hin) hc16) = AccMath.accVec (rowF fl tab (wL L).val (2 * t1.val + 1) (2 * k.val)) (offF fl (wL L).val (2 * t1.val + 1) (2 * k.val)) 3 24 :=
        acc_step d L fl tab (wL L).val (2 * t1.val + 1) (2 * k.val) 0 _ hRA ⟨23, by decide⟩ ⟨3, by decide⟩ _ rfl _ hw_v1919_1 _ (k1_off73_form ..) _ hc16
      have s_A3_24 : addf (AccMath.accVec (rowF fl tab (wL L).val (2 * t1.val + 1) (2 * k.val)) (offF fl (wL L).val (2 * t1.val + 1) (2 * k.val)) 3 24) (shapeCast S16 (pair1_lt.sl.v1985_1 d L tab k r g1 g2 hR hin) hc16) = AccMath.accVec (rowF fl tab (wL L).val (2 * t1.val + 1) (2 * k.val)) (offF fl (wL L).val (2 * t1.val + 1) (2 * k.val)) 3 25 :=
        acc_step d L fl tab (wL L).val (2 * t1.val + 1) (2 * k.val) 0 _ hRA ⟨24, by decide⟩ ⟨3, by decide⟩ _ rfl _ hw_v1955_1 _ (k1_off74_form ..) _ hc16
      have s_A3_25 : addf (AccMath.accVec (rowF fl tab (wL L).val (2 * t1.val + 1) (2 * k.val)) (offF fl (wL L).val (2 * t1.val + 1) (2 * k.val)) 3 25) (shapeCast S16 (pair1_lt.sl.v2021_1 d L tab k r g1 g2 hR hin) hc16) = AccMath.accVec (rowF fl tab (wL L).val (2 * t1.val + 1) (2 * k.val)) (offF fl (wL L).val (2 * t1.val + 1) (2 * k.val)) 3 26 :=
        acc_step d L fl tab (wL L).val (2 * t1.val + 1) (2 * k.val) 0 _ hRA ⟨25, by decide⟩ ⟨3, by decide⟩ _ rfl _ hw_v1991_1 _ (k1_off75_form ..) _ hc16
      have s_A3_26 : addf (AccMath.accVec (rowF fl tab (wL L).val (2 * t1.val + 1) (2 * k.val)) (offF fl (wL L).val (2 * t1.val + 1) (2 * k.val)) 3 26) (shapeCast S16 (pair1_lt.sl.v2057_1 d L tab k r g1 g2 hR hin) hc16) = AccMath.accVec (rowF fl tab (wL L).val (2 * t1.val + 1) (2 * k.val)) (offF fl (wL L).val (2 * t1.val + 1) (2 * k.val)) 3 27 :=
        acc_step d L fl tab (wL L).val (2 * t1.val + 1) (2 * k.val) 0 _ hRA ⟨26, by decide⟩ ⟨3, by decide⟩ _ rfl _ hw_v2027_1 _ (k1_off76_form ..) _ hc16
      have s_A3_27 : addf (AccMath.accVec (rowF fl tab (wL L).val (2 * t1.val + 1) (2 * k.val)) (offF fl (wL L).val (2 * t1.val + 1) (2 * k.val)) 3 27) (shapeCast S16 (pair1_lt.sl.v2093_1 d L tab k r g1 g2 hR hin) hc16) = AccMath.accVec (rowF fl tab (wL L).val (2 * t1.val + 1) (2 * k.val)) (offF fl (wL L).val (2 * t1.val + 1) (2 * k.val)) 3 28 :=
        acc_step d L fl tab (wL L).val (2 * t1.val + 1) (2 * k.val) 0 _ hRA ⟨27, by decide⟩ ⟨3, by decide⟩ _ rfl _ hw_v2063_1 _ (k1_off77_form ..) _ hc16
      have s_A3_28 : addf (AccMath.accVec (rowF fl tab (wL L).val (2 * t1.val + 1) (2 * k.val)) (offF fl (wL L).val (2 * t1.val + 1) (2 * k.val)) 3 28) (shapeCast S16 (pair1_lt.sl.v2129_1 d L tab k r g1 g2 hR hin) hc16) = AccMath.accVec (rowF fl tab (wL L).val (2 * t1.val + 1) (2 * k.val)) (offF fl (wL L).val (2 * t1.val + 1) (2 * k.val)) 3 29 :=
        acc_step d L fl tab (wL L).val (2 * t1.val + 1) (2 * k.val) 0 _ hRA ⟨28, by decide⟩ ⟨3, by decide⟩ _ rfl _ hw_v2099_1 _ (k1_off78_form ..) _ hc16
      have s_A3_29 : addf (AccMath.accVec (rowF fl tab (wL L).val (2 * t1.val + 1) (2 * k.val)) (offF fl (wL L).val (2 * t1.val + 1) (2 * k.val)) 3 29) (shapeCast S16 (pair1_lt.sl.v2165_1 d L tab k r g1 g2 hR hin) hc16) = AccMath.accVec (rowF fl tab (wL L).val (2 * t1.val + 1) (2 * k.val)) (offF fl (wL L).val (2 * t1.val + 1) (2 * k.val)) 3 30 :=
        acc_step d L fl tab (wL L).val (2 * t1.val + 1) (2 * k.val) 0 _ hRA ⟨29, by decide⟩ ⟨3, by decide⟩ _ rfl _ hw_v2135_1 _ (k1_off79_form ..) _ hc16
      have s_A3_30 : addf (AccMath.accVec (rowF fl tab (wL L).val (2 * t1.val + 1) (2 * k.val)) (offF fl (wL L).val (2 * t1.val + 1) (2 * k.val)) 3 30) (shapeCast S16 (pair1_lt.sl.v2201_1 d L tab k r g1 g2 hR hin) hc16) = AccMath.accVec (rowF fl tab (wL L).val (2 * t1.val + 1) (2 * k.val)) (offF fl (wL L).val (2 * t1.val + 1) (2 * k.val)) 3 31 :=
        acc_step d L fl tab (wL L).val (2 * t1.val + 1) (2 * k.val) 0 _ hRA ⟨30, by decide⟩ ⟨3, by decide⟩ _ rfl _ hw_v2171_1 _ (k1_off80_form ..) _ hc16
      have s_A3_31 : addf (AccMath.accVec (rowF fl tab (wL L).val (2 * t1.val + 1) (2 * k.val)) (offF fl (wL L).val (2 * t1.val + 1) (2 * k.val)) 3 31) (shapeCast S16 (pair1_lt.sl.v2237_1 d L tab k r g1 g2 hR hin) hc16) = AccMath.accVec (rowF fl tab (wL L).val (2 * t1.val + 1) (2 * k.val)) (offF fl (wL L).val (2 * t1.val + 1) (2 * k.val)) 3 32 :=
        acc_step d L fl tab (wL L).val (2 * t1.val + 1) (2 * k.val) 0 _ hRA ⟨31, by decide⟩ ⟨3, by decide⟩ _ rfl _ hw_v2207_1 _ (k1_off81_form ..) _ hc16
      have s_A3_32 : addf (AccMath.accVec (rowF fl tab (wL L).val (2 * t1.val + 1) (2 * k.val)) (offF fl (wL L).val (2 * t1.val + 1) (2 * k.val)) 3 32) (shapeCast S16 (pair1_lt.sl.v1697_2 d L tab k r g1 g2 hR hin) hc16) = AccMath.accVec (rowF fl tab (wL L).val (2 * t1.val + 1) (2 * k.val)) (offF fl (wL L).val (2 * t1.val + 1) (2 * k.val)) 3 33 :=
        acc_step d L fl tab (wL L).val (2 * t1.val + 1) (2 * k.val) 0 _ hRA ⟨32, by decide⟩ ⟨3, by decide⟩ _ rfl _ hw_v1667_2 _ (k1_off66_form ..) _ hc16
      have s_A3_33 : addf (AccMath.accVec (rowF fl tab (wL L).val (2 * t1.val + 1) (2 * k.val)) (offF fl (wL L).val (2 * t1.val + 1) (2 * k.val)) 3 33) (shapeCast S16 (pair1_lt.sl.v1733_2 d L tab k r g1 g2 hR hin) hc16) = AccMath.accVec (rowF fl tab (wL L).val (2 * t1.val + 1) (2 * k.val)) (offF fl (wL L).val (2 * t1.val + 1) (2 * k.val)) 3 34 :=
        acc_step d L fl tab (wL L).val (2 * t1.val + 1) (2 * k.val) 0 _ hRA ⟨33, by decide⟩ ⟨3, by decide⟩ _ rfl _ hw_v1703_2 _ (k1_off67_form ..) _ hc16
      have s_A3_34 : addf (AccMath.accVec (rowF fl tab (wL L).val (2 * t1.val + 1) (2 * k.val)) (offF fl (wL L).val (2 * t1.val + 1) (2 * k.val)) 3 34) (shapeCast S16 (pair1_lt.sl.v1769_2 d L tab k r g1 g2 hR hin) hc16) = AccMath.accVec (rowF fl tab (wL L).val (2 * t1.val + 1) (2 * k.val)) (offF fl (wL L).val (2 * t1.val + 1) (2 * k.val)) 3 35 :=
        acc_step d L fl tab (wL L).val (2 * t1.val + 1) (2 * k.val) 0 _ hRA ⟨34, by decide⟩ ⟨3, by decide⟩ _ rfl _ hw_v1739_2 _ (k1_off68_form ..) _ hc16
      have s_A3_35 : addf (AccMath.accVec (rowF fl tab (wL L).val (2 * t1.val + 1) (2 * k.val)) (offF fl (wL L).val (2 * t1.val + 1) (2 * k.val)) 3 35) (shapeCast S16 (pair1_lt.sl.v1805_2 d L tab k r g1 g2 hR hin) hc16) = AccMath.accVec (rowF fl tab (wL L).val (2 * t1.val + 1) (2 * k.val)) (offF fl (wL L).val (2 * t1.val + 1) (2 * k.val)) 3 36 :=
        acc_step d L fl tab (wL L).val (2 * t1.val + 1) (2 * k.val) 0 _ hRA ⟨35, by decide⟩ ⟨3, by decide⟩ _ rfl _ hw_v1775_2 _ (k1_off69_form ..) _ hc16
      have s_A3_36 : addf (AccMath.accVec (rowF fl tab (wL L).val (2 * t1.val + 1) (2 * k.val)) (offF fl (wL L).val (2 * t1.val + 1) (2 * k.val)) 3 36) (shapeCast S16 (pair1_lt.sl.v1841_2 d L tab k r g1 g2 hR hin) hc16) = AccMath.accVec (rowF fl tab (wL L).val (2 * t1.val + 1) (2 * k.val)) (offF fl (wL L).val (2 * t1.val + 1) (2 * k.val)) 3 37 :=
        acc_step d L fl tab (wL L).val (2 * t1.val + 1) (2 * k.val) 0 _ hRA ⟨36, by decide⟩ ⟨3, by decide⟩ _ rfl _ hw_v1811_2 _ (k1_off70_form ..) _ hc16
      have s_A3_37 : addf (AccMath.accVec (rowF fl tab (wL L).val (2 * t1.val + 1) (2 * k.val)) (offF fl (wL L).val (2 * t1.val + 1) (2 * k.val)) 3 37) (shapeCast S16 (pair1_lt.sl.v1877_2 d L tab k r g1 g2 hR hin) hc16) = AccMath.accVec (rowF fl tab (wL L).val (2 * t1.val + 1) (2 * k.val)) (offF fl (wL L).val (2 * t1.val + 1) (2 * k.val)) 3 38 :=
        acc_step d L fl tab (wL L).val (2 * t1.val + 1) (2 * k.val) 0 _ hRA ⟨37, by decide⟩ ⟨3, by decide⟩ _ rfl _ hw_v1847_2 _ (k1_off71_form ..) _ hc16
      have s_A3_38 : addf (AccMath.accVec (rowF fl tab (wL L).val (2 * t1.val + 1) (2 * k.val)) (offF fl (wL L).val (2 * t1.val + 1) (2 * k.val)) 3 38) (shapeCast S16 (pair1_lt.sl.v1913_2 d L tab k r g1 g2 hR hin) hc16) = AccMath.accVec (rowF fl tab (wL L).val (2 * t1.val + 1) (2 * k.val)) (offF fl (wL L).val (2 * t1.val + 1) (2 * k.val)) 3 39 :=
        acc_step d L fl tab (wL L).val (2 * t1.val + 1) (2 * k.val) 0 _ hRA ⟨38, by decide⟩ ⟨3, by decide⟩ _ rfl _ hw_v1883_2 _ (k1_off72_form ..) _ hc16
      have s_A3_39 : addf (AccMath.accVec (rowF fl tab (wL L).val (2 * t1.val + 1) (2 * k.val)) (offF fl (wL L).val (2 * t1.val + 1) (2 * k.val)) 3 39) (shapeCast S16 (pair1_lt.sl.v1949_2 d L tab k r g1 g2 hR hin) hc16) = AccMath.accVec (rowF fl tab (wL L).val (2 * t1.val + 1) (2 * k.val)) (offF fl (wL L).val (2 * t1.val + 1) (2 * k.val)) 3 40 :=
        acc_step d L fl tab (wL L).val (2 * t1.val + 1) (2 * k.val) 0 _ hRA ⟨39, by decide⟩ ⟨3, by decide⟩ _ rfl _ hw_v1919_2 _ (k1_off73_form ..) _ hc16
      have s_A3_40 : addf (AccMath.accVec (rowF fl tab (wL L).val (2 * t1.val + 1) (2 * k.val)) (offF fl (wL L).val (2 * t1.val + 1) (2 * k.val)) 3 40) (shapeCast S16 (pair1_lt.sl.v1985_2 d L tab k r g1 g2 hR hin) hc16) = AccMath.accVec (rowF fl tab (wL L).val (2 * t1.val + 1) (2 * k.val)) (offF fl (wL L).val (2 * t1.val + 1) (2 * k.val)) 3 41 :=
        acc_step d L fl tab (wL L).val (2 * t1.val + 1) (2 * k.val) 0 _ hRA ⟨40, by decide⟩ ⟨3, by decide⟩ _ rfl _ hw_v1955_2 _ (k1_off74_form ..) _ hc16
      have s_A3_41 : addf (AccMath.accVec (rowF fl tab (wL L).val (2 * t1.val + 1) (2 * k.val)) (offF fl (wL L).val (2 * t1.val + 1) (2 * k.val)) 3 41) (shapeCast S16 (pair1_lt.sl.v2021_2 d L tab k r g1 g2 hR hin) hc16) = AccMath.accVec (rowF fl tab (wL L).val (2 * t1.val + 1) (2 * k.val)) (offF fl (wL L).val (2 * t1.val + 1) (2 * k.val)) 3 42 :=
        acc_step d L fl tab (wL L).val (2 * t1.val + 1) (2 * k.val) 0 _ hRA ⟨41, by decide⟩ ⟨3, by decide⟩ _ rfl _ hw_v1991_2 _ (k1_off75_form ..) _ hc16
      have s_A3_42 : addf (AccMath.accVec (rowF fl tab (wL L).val (2 * t1.val + 1) (2 * k.val)) (offF fl (wL L).val (2 * t1.val + 1) (2 * k.val)) 3 42) (shapeCast S16 (pair1_lt.sl.v2057_2 d L tab k r g1 g2 hR hin) hc16) = AccMath.accVec (rowF fl tab (wL L).val (2 * t1.val + 1) (2 * k.val)) (offF fl (wL L).val (2 * t1.val + 1) (2 * k.val)) 3 43 :=
        acc_step d L fl tab (wL L).val (2 * t1.val + 1) (2 * k.val) 0 _ hRA ⟨42, by decide⟩ ⟨3, by decide⟩ _ rfl _ hw_v2027_2 _ (k1_off76_form ..) _ hc16
      have s_A3_43 : addf (AccMath.accVec (rowF fl tab (wL L).val (2 * t1.val + 1) (2 * k.val)) (offF fl (wL L).val (2 * t1.val + 1) (2 * k.val)) 3 43) (shapeCast S16 (pair1_lt.sl.v2093_2 d L tab k r g1 g2 hR hin) hc16) = AccMath.accVec (rowF fl tab (wL L).val (2 * t1.val + 1) (2 * k.val)) (offF fl (wL L).val (2 * t1.val + 1) (2 * k.val)) 3 44 :=
        acc_step d L fl tab (wL L).val (2 * t1.val + 1) (2 * k.val) 0 _ hRA ⟨43, by decide⟩ ⟨3, by decide⟩ _ rfl _ hw_v2063_2 _ (k1_off77_form ..) _ hc16
      have s_A3_44 : addf (AccMath.accVec (rowF fl tab (wL L).val (2 * t1.val + 1) (2 * k.val)) (offF fl (wL L).val (2 * t1.val + 1) (2 * k.val)) 3 44) (shapeCast S16 (pair1_lt.sl.v2129_2 d L tab k r g1 g2 hR hin) hc16) = AccMath.accVec (rowF fl tab (wL L).val (2 * t1.val + 1) (2 * k.val)) (offF fl (wL L).val (2 * t1.val + 1) (2 * k.val)) 3 45 :=
        acc_step d L fl tab (wL L).val (2 * t1.val + 1) (2 * k.val) 0 _ hRA ⟨44, by decide⟩ ⟨3, by decide⟩ _ rfl _ hw_v2099_2 _ (k1_off78_form ..) _ hc16
      have s_A3_45 : addf (AccMath.accVec (rowF fl tab (wL L).val (2 * t1.val + 1) (2 * k.val)) (offF fl (wL L).val (2 * t1.val + 1) (2 * k.val)) 3 45) (shapeCast S16 (pair1_lt.sl.v2165_2 d L tab k r g1 g2 hR hin) hc16) = AccMath.accVec (rowF fl tab (wL L).val (2 * t1.val + 1) (2 * k.val)) (offF fl (wL L).val (2 * t1.val + 1) (2 * k.val)) 3 46 :=
        acc_step d L fl tab (wL L).val (2 * t1.val + 1) (2 * k.val) 0 _ hRA ⟨45, by decide⟩ ⟨3, by decide⟩ _ rfl _ hw_v2135_2 _ (k1_off79_form ..) _ hc16
      have s_A3_46 : addf (AccMath.accVec (rowF fl tab (wL L).val (2 * t1.val + 1) (2 * k.val)) (offF fl (wL L).val (2 * t1.val + 1) (2 * k.val)) 3 46) (shapeCast S16 (pair1_lt.sl.v2201_2 d L tab k r g1 g2 hR hin) hc16) = AccMath.accVec (rowF fl tab (wL L).val (2 * t1.val + 1) (2 * k.val)) (offF fl (wL L).val (2 * t1.val + 1) (2 * k.val)) 3 47 :=
        acc_step d L fl tab (wL L).val (2 * t1.val + 1) (2 * k.val) 0 _ hRA ⟨46, by decide⟩ ⟨3, by decide⟩ _ rfl _ hw_v2171_2 _ (k1_off80_form ..) _ hc16
      have s_A3_47 : addf (AccMath.accVec (rowF fl tab (wL L).val (2 * t1.val + 1) (2 * k.val)) (offF fl (wL L).val (2 * t1.val + 1) (2 * k.val)) 3 47) (shapeCast S16 (pair1_lt.sl.v2237_2 d L tab k r g1 g2 hR hin) hc16) = AccMath.accVec (rowF fl tab (wL L).val (2 * t1.val + 1) (2 * k.val)) (offF fl (wL L).val (2 * t1.val + 1) (2 * k.val)) 3 48 :=
        acc_step d L fl tab (wL L).val (2 * t1.val + 1) (2 * k.val) 0 _ hRA ⟨47, by decide⟩ ⟨3, by decide⟩ _ rfl _ hw_v2207_2 _ (k1_off81_form ..) _ hc16
      have s_A3_48 : addf (AccMath.accVec (rowF fl tab (wL L).val (2 * t1.val + 1) (2 * k.val)) (offF fl (wL L).val (2 * t1.val + 1) (2 * k.val)) 3 48) (shapeCast S16 (pair1_lt.sl.v1486 d L tab k r g1 g2 hR hin) hc16) = AccMath.accVec (rowF fl tab (wL L).val (2 * t1.val + 1) (2 * k.val)) (offF fl (wL L).val (2 * t1.val + 1) (2 * k.val)) 3 49 :=
        acc_step d L fl tab (wL L).val (2 * t1.val + 1) (2 * k.val) 0 _ hRA ⟨48, by decide⟩ ⟨3, by decide⟩ _ rfl _ hw_v1456 _ (k1_off83_form ..) _ hc16
      have s_A3_49 : addf (AccMath.accVec (rowF fl tab (wL L).val (2 * t1.val + 1) (2 * k.val)) (offF fl (wL L).val (2 * t1.val + 1) (2 * k.val)) 3 49) (shapeCast S16 (pair1_lt.sl.v1520 d L tab k r g1 g2 hR hin) hc16) = AccMath.accVec (rowF fl tab (wL L).val (2 * t1.val + 1) (2 * k.val)) (offF fl (wL L).val (2 * t1.val + 1) (2 * k.val)) 3 50 :=
        acc_step d L fl tab (wL L).val (2 * t1.val + 1) (2 * k.val) 0 _ hRA ⟨49, by decide⟩ ⟨3, by decide⟩ _ rfl _ hw_v1490 _ (k1_off84_form ..) _ hc16
      have hP_A3 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val)) (offF fl (wL L).val (2 * t1.val + 1) (2 * k.val)) 3 0) (shapeCast S16 (pair1_lt.sl.v1697 d L tab k r g1 g2 hR hin) hc16)) (shapeCast S16 (pair1_lt.sl.v1733 d L tab k r g1 g2 hR hin) hc16)) (shapeCast S16 (pair1_lt.sl.v1769 d L tab k r g1 g2 hR hin) hc16)) (shapeCast S16 (pair1_lt.sl.v1805 d L tab k r g1 g2 hR hin) hc16)) (shapeCast S16 (pair1_lt.sl.v1841 d L tab k r g1 g2 hR hin) hc16)) (shapeCast S16 (pair1_lt.sl.v1877 d L tab k r g1 g2 hR hin) hc16)) (shapeCast S16 (pair1_lt.sl.v1913 d L tab k r g1 g2 hR hin) hc16)) (shapeCast S16 (pair1_lt.sl.v1949 d L tab k r g1 g2 hR hin) hc16)) (shapeCast S16 (pair1_lt.sl.v1985 d L tab k r g1 g2 hR hin) hc16)) (shapeCast S16 (pair1_lt.sl.v2021 d L tab k r g1 g2 hR hin) hc16)) (shapeCast S16 (pair1_lt.sl.v2057 d L tab k r g1 g2 hR hin) hc16)) (shapeCast S16 (pair1_lt.sl.v2093 d L tab k r g1 g2 hR hin) hc16)) (shapeCast S16 (pair1_lt.sl.v2129 d L tab k r g1 g2 hR hin) hc16)) (shapeCast S16 (pair1_lt.sl.v2165 d L tab k r g1 g2 hR hin) hc16)) (shapeCast S16 (pair1_lt.sl.v2201 d L tab k r g1 g2 hR hin) hc16)) (shapeCast S16 (pair1_lt.sl.v2237 d L tab k r g1 g2 hR hin) hc16)) (shapeCast S16 (pair1_lt.sl.v1697_1 d L tab k r g1 g2 hR hin) hc16)) (shapeCast S16 (pair1_lt.sl.v1733_1 d L tab k r g1 g2 hR hin) hc16)) (shapeCast S16 (pair1_lt.sl.v1769_1 d L tab k r g1 g2 hR hin) hc16)) (shapeCast S16 (pair1_lt.sl.v1805_1 d L tab k r g1 g2 hR hin) hc16)) (shapeCast S16 (pair1_lt.sl.v1841_1 d L tab k r g1 g2 hR hin) hc16)) (shapeCast S16 (pair1_lt.sl.v1877_1 d L tab k r g1 g2 hR hin) hc16)) (shapeCast S16 (pair1_lt.sl.v1913_1 d L tab k r g1 g2 hR hin) hc16)) (shapeCast S16 (pair1_lt.sl.v1949_1 d L tab k r g1 g2 hR hin) hc16)) (shapeCast S16 (pair1_lt.sl.v1985_1 d L tab k r g1 g2 hR hin) hc16)) (shapeCast S16 (pair1_lt.sl.v2021_1 d L tab k r g1 g2 hR hin) hc16)) (shapeCast S16 (pair1_lt.sl.v2057_1 d L tab k r g1 g2 hR hin) hc16)) (shapeCast S16 (pair1_lt.sl.v2093_1 d L tab k r g1 g2 hR hin) hc16)) (shapeCast S16 (pair1_lt.sl.v2129_1 d L tab k r g1 g2 hR hin) hc16)) (shapeCast S16 (pair1_lt.sl.v2165_1 d L tab k r g1 g2 hR hin) hc16)) (shapeCast S16 (pair1_lt.sl.v2201_1 d L tab k r g1 g2 hR hin) hc16)) (shapeCast S16 (pair1_lt.sl.v2237_1 d L tab k r g1 g2 hR hin) hc16)) (shapeCast S16 (pair1_lt.sl.v1697_2 d L tab k r g1 g2 hR hin) hc16)) (shapeCast S16 (pair1_lt.sl.v1733_2 d L tab k r g1 g2 hR hin) hc16)) (shapeCast S16 (pair1_lt.sl.v1769_2 d L tab k r g1 g2 hR hin) hc16)) (shapeCast S16 (pair1_lt.sl.v1805_2 d L tab k r g1 g2 hR hin) hc16)) (shapeCast S16 (pair1_lt.sl.v1841_2 d L tab k r g1 g2 hR hin) hc16)) (shapeCast S16 (pair1_lt.sl.v1877_2 d L tab k r g1 g2 hR hin) hc16)) (shapeCast S16 (pair1_lt.sl.v1913_2 d L tab k r g1 g2 hR hin) hc16)) (shapeCast S16 (pair1_lt.sl.v1949_2 d L tab k r g1 g2 hR hin) hc16)) (shapeCast S16 (pair1_lt.sl.v1985_2 d L tab k r g1 g2 hR hin) hc16)) (shapeCast S16 (pair1_lt.sl.v2021_2 d L tab k r g1 g2 hR hin) hc16)) (shapeCast S16 (pair1_lt.sl.v2057_2 d L tab k r g1 g2 hR hin) hc16)) (shapeCast S16 (pair1_lt.sl.v2093_2 d L tab k r g1 g2 hR hin) hc16)) (shapeCast S16 (pair1_lt.sl.v2129_2 d L tab k r g1 g2 hR hin) hc16)) (shapeCast S16 (pair1_lt.sl.v2165_2 d L tab k r g1 g2 hR hin) hc16)) (shapeCast S16 (pair1_lt.sl.v2201_2 d L tab k r g1 g2 hR hin) hc16)) (shapeCast S16 (pair1_lt.sl.v2237_2 d L tab k r g1 g2 hR hin) hc16)) (shapeCast S16 (pair1_lt.sl.v1486 d L tab k r g1 g2 hR hin) hc16)) (shapeCast S16 (pair1_lt.sl.v1520 d L tab k r g1 g2 hR hin) hc16)) hc1 x = Spec.bagPartial fl tab (128 * (wL L).val + 16 * (2 * t1.val + 1) + (2 * k.val)) (16 * 3 + (x 2).val) 50 := fun x => by
        rw [s_A3_0, s_A3_1, s_A3_2, s_A3_3, s_A3_4, s_A3_5, s_A3_6, s_A3_7, s_A3_8, s_A3_9, s_A3_10, s_A3_11, s_A3_12, s_A3_13, s_A3_14, s_A3_15, s_A3_16, s_A3_17, s_A3_18, s_A3_19, s_A3_20, s_A3_21, s_A3_22, s_A3_23, s_A3_24, s_A3_25, s_A3_26, s_A3_27, s_A3_28, s_A3_29, s_A3_30, s_A3_31, s_A3_32, s_A3_33, s_A3_34, s_A3_35, s_A3_36, s_A3_37, s_A3_38, s_A3_39, s_A3_40, s_A3_41, s_A3_42, s_A3_43, s_A3_44, s_A3_45, s_A3_46, s_A3_47, s_A3_48, s_A3_49]
        exact payload_ok fl tab (wL L).val (2 * t1.val + 1) (2 * k.val) ⟨3, by decide⟩ hc1 x
      have s_B0_0 : addf (AccMath.accVec (rowF fl tab (wL L).val (2 * t1.val + 1) (2 * k.val + 1)) (offF fl (wL L).val (2 * t1.val + 1) (2 * k.val + 1)) 0 0) (shapeCast S16 (pair1_lt.sl.v1673_3 d L tab k r g1 g2 hR hin h9) hc16) = AccMath.accVec (rowF fl tab (wL L).val (2 * t1.val + 1) (2 * k.val + 1)) (offF fl (wL L).val (2 * t1.val + 1) (2 * k.val + 1)) 0 1 :=
        acc_step d L fl tab (wL L).val (2 * t1.val + 1) (2 * k.val + 1) 1 _ hRB ⟨0, by decide⟩ ⟨0, by decide⟩ _ rfl _ hw_v1667_3 _ (k1_off93_form ..) _ hc16
      have s_B0_1 : addf (AccMath.accVec (rowF fl tab (wL L).val (2 * t1.val + 1) (2 * k.val + 1)) (offF fl (wL L).val (2 * t1.val + 1) (2 * k.val + 1)) 0 1) (shapeCast S16 (pair1_lt.sl.v1709_3 d L tab k r g1 g2 hR hin h9) hc16) = AccMath.accVec (rowF fl tab (wL L).val (2 * t1.val + 1) (2 * k.val + 1)) (offF fl (wL L).val (2 * t1.val + 1) (2 * k.val + 1)) 0 2 :=
        acc_step d L fl tab (wL L).val (2 * t1.val + 1) (2 * k.val + 1) 1 _ hRB ⟨1, by decide⟩ ⟨0, by decide⟩ _ rfl _ hw_v1703_3 _ (k1_off94_form ..) _ hc16
      have s_B0_2 : addf (AccMath.accVec (rowF fl tab (wL L).val (2 * t1.val + 1) (2 * k.val + 1)) (offF fl (wL L).val (2 * t1.val + 1) (2 * k.val + 1)) 0 2) (shapeCast S16 (pair1_lt.sl.v1745_3 d L tab k r g1 g2 hR hin h9) hc16) = AccMath.accVec (rowF fl tab (wL L).val (2 * t1.val + 1) (2 * k.val + 1)) (offF fl (wL L).val (2 * t1.val + 1) (2 * k.val + 1)) 0 3 :=
        acc_step d L fl tab (wL L).val (2 * t1.val + 1) (2 * k.val + 1) 1 _ hRB ⟨2, by decide⟩ ⟨0, by decide⟩ _ rfl _ hw_v1739_3 _ (k1_off95_form ..) _ hc16
      have s_B0_3 : addf (AccMath.accVec (rowF fl tab (wL L).val (2 * t1.val + 1) (2 * k.val + 1)) (offF fl (wL L).val (2 * t1.val + 1) (2 * k.val + 1)) 0 3) (shapeCast S16 (pair1_lt.sl.v1781_3 d L tab k r g1 g2 hR hin h9) hc16) = AccMath.accVec (rowF fl tab (wL L).val (2 * t1.val + 1) (2 * k.val + 1)) (offF fl (wL L).val (2 * t1.val + 1) (2 * k.val + 1)) 0 4 :=
        acc_step d L fl tab (wL L).val (2 * t1.val + 1) (2 * k.val + 1) 1 _ hRB ⟨3, by decide⟩ ⟨0, by decide⟩ _ rfl _ hw_v1775_3 _ (k1_off96_form ..) _ hc16
      have s_B0_4 : addf (AccMath.accVec (rowF fl tab (wL L).val (2 * t1.val + 1) (2 * k.val + 1)) (offF fl (wL L).val (2 * t1.val + 1) (2 * k.val + 1)) 0 4) (shapeCast S16 (pair1_lt.sl.v1817_3 d L tab k r g1 g2 hR hin h9) hc16) = AccMath.accVec (rowF fl tab (wL L).val (2 * t1.val + 1) (2 * k.val + 1)) (offF fl (wL L).val (2 * t1.val + 1) (2 * k.val + 1)) 0 5 :=
        acc_step d L fl tab (wL L).val (2 * t1.val + 1) (2 * k.val + 1) 1 _ hRB ⟨4, by decide⟩ ⟨0, by decide⟩ _ rfl _ hw_v1811_3 _ (k1_off97_form ..) _ hc16
      have s_B0_5 : addf (AccMath.accVec (rowF fl tab (wL L).val (2 * t1.val + 1) (2 * k.val + 1)) (offF fl (wL L).val (2 * t1.val + 1) (2 * k.val + 1)) 0 5) (shapeCast S16 (pair1_lt.sl.v1853_3 d L tab k r g1 g2 hR hin h9) hc16) = AccMath.accVec (rowF fl tab (wL L).val (2 * t1.val + 1) (2 * k.val + 1)) (offF fl (wL L).val (2 * t1.val + 1) (2 * k.val + 1)) 0 6 :=
        acc_step d L fl tab (wL L).val (2 * t1.val + 1) (2 * k.val + 1) 1 _ hRB ⟨5, by decide⟩ ⟨0, by decide⟩ _ rfl _ hw_v1847_3 _ (k1_off98_form ..) _ hc16
      have s_B0_6 : addf (AccMath.accVec (rowF fl tab (wL L).val (2 * t1.val + 1) (2 * k.val + 1)) (offF fl (wL L).val (2 * t1.val + 1) (2 * k.val + 1)) 0 6) (shapeCast S16 (pair1_lt.sl.v1889_3 d L tab k r g1 g2 hR hin h9) hc16) = AccMath.accVec (rowF fl tab (wL L).val (2 * t1.val + 1) (2 * k.val + 1)) (offF fl (wL L).val (2 * t1.val + 1) (2 * k.val + 1)) 0 7 :=
        acc_step d L fl tab (wL L).val (2 * t1.val + 1) (2 * k.val + 1) 1 _ hRB ⟨6, by decide⟩ ⟨0, by decide⟩ _ rfl _ hw_v1883_3 _ (k1_off99_form ..) _ hc16
      have s_B0_7 : addf (AccMath.accVec (rowF fl tab (wL L).val (2 * t1.val + 1) (2 * k.val + 1)) (offF fl (wL L).val (2 * t1.val + 1) (2 * k.val + 1)) 0 7) (shapeCast S16 (pair1_lt.sl.v1925_3 d L tab k r g1 g2 hR hin h9) hc16) = AccMath.accVec (rowF fl tab (wL L).val (2 * t1.val + 1) (2 * k.val + 1)) (offF fl (wL L).val (2 * t1.val + 1) (2 * k.val + 1)) 0 8 :=
        acc_step d L fl tab (wL L).val (2 * t1.val + 1) (2 * k.val + 1) 1 _ hRB ⟨7, by decide⟩ ⟨0, by decide⟩ _ rfl _ hw_v1919_3 _ (k1_off100_form ..) _ hc16
      have s_B0_8 : addf (AccMath.accVec (rowF fl tab (wL L).val (2 * t1.val + 1) (2 * k.val + 1)) (offF fl (wL L).val (2 * t1.val + 1) (2 * k.val + 1)) 0 8) (shapeCast S16 (pair1_lt.sl.v1961_3 d L tab k r g1 g2 hR hin h9) hc16) = AccMath.accVec (rowF fl tab (wL L).val (2 * t1.val + 1) (2 * k.val + 1)) (offF fl (wL L).val (2 * t1.val + 1) (2 * k.val + 1)) 0 9 :=
        acc_step d L fl tab (wL L).val (2 * t1.val + 1) (2 * k.val + 1) 1 _ hRB ⟨8, by decide⟩ ⟨0, by decide⟩ _ rfl _ hw_v1955_3 _ (k1_off101_form ..) _ hc16
      have s_B0_9 : addf (AccMath.accVec (rowF fl tab (wL L).val (2 * t1.val + 1) (2 * k.val + 1)) (offF fl (wL L).val (2 * t1.val + 1) (2 * k.val + 1)) 0 9) (shapeCast S16 (pair1_lt.sl.v1997_3 d L tab k r g1 g2 hR hin h9) hc16) = AccMath.accVec (rowF fl tab (wL L).val (2 * t1.val + 1) (2 * k.val + 1)) (offF fl (wL L).val (2 * t1.val + 1) (2 * k.val + 1)) 0 10 :=
        acc_step d L fl tab (wL L).val (2 * t1.val + 1) (2 * k.val + 1) 1 _ hRB ⟨9, by decide⟩ ⟨0, by decide⟩ _ rfl _ hw_v1991_3 _ (k1_off102_form ..) _ hc16
      have s_B0_10 : addf (AccMath.accVec (rowF fl tab (wL L).val (2 * t1.val + 1) (2 * k.val + 1)) (offF fl (wL L).val (2 * t1.val + 1) (2 * k.val + 1)) 0 10) (shapeCast S16 (pair1_lt.sl.v2033_3 d L tab k r g1 g2 hR hin h9) hc16) = AccMath.accVec (rowF fl tab (wL L).val (2 * t1.val + 1) (2 * k.val + 1)) (offF fl (wL L).val (2 * t1.val + 1) (2 * k.val + 1)) 0 11 :=
        acc_step d L fl tab (wL L).val (2 * t1.val + 1) (2 * k.val + 1) 1 _ hRB ⟨10, by decide⟩ ⟨0, by decide⟩ _ rfl _ hw_v2027_3 _ (k1_off103_form ..) _ hc16
      have s_B0_11 : addf (AccMath.accVec (rowF fl tab (wL L).val (2 * t1.val + 1) (2 * k.val + 1)) (offF fl (wL L).val (2 * t1.val + 1) (2 * k.val + 1)) 0 11) (shapeCast S16 (pair1_lt.sl.v2069_3 d L tab k r g1 g2 hR hin h9) hc16) = AccMath.accVec (rowF fl tab (wL L).val (2 * t1.val + 1) (2 * k.val + 1)) (offF fl (wL L).val (2 * t1.val + 1) (2 * k.val + 1)) 0 12 :=
        acc_step d L fl tab (wL L).val (2 * t1.val + 1) (2 * k.val + 1) 1 _ hRB ⟨11, by decide⟩ ⟨0, by decide⟩ _ rfl _ hw_v2063_3 _ (k1_off104_form ..) _ hc16
      have s_B0_12 : addf (AccMath.accVec (rowF fl tab (wL L).val (2 * t1.val + 1) (2 * k.val + 1)) (offF fl (wL L).val (2 * t1.val + 1) (2 * k.val + 1)) 0 12) (shapeCast S16 (pair1_lt.sl.v2105_3 d L tab k r g1 g2 hR hin h9) hc16) = AccMath.accVec (rowF fl tab (wL L).val (2 * t1.val + 1) (2 * k.val + 1)) (offF fl (wL L).val (2 * t1.val + 1) (2 * k.val + 1)) 0 13 :=
        acc_step d L fl tab (wL L).val (2 * t1.val + 1) (2 * k.val + 1) 1 _ hRB ⟨12, by decide⟩ ⟨0, by decide⟩ _ rfl _ hw_v2099_3 _ (k1_off105_form ..) _ hc16
      have s_B0_13 : addf (AccMath.accVec (rowF fl tab (wL L).val (2 * t1.val + 1) (2 * k.val + 1)) (offF fl (wL L).val (2 * t1.val + 1) (2 * k.val + 1)) 0 13) (shapeCast S16 (pair1_lt.sl.v2141_3 d L tab k r g1 g2 hR hin h9) hc16) = AccMath.accVec (rowF fl tab (wL L).val (2 * t1.val + 1) (2 * k.val + 1)) (offF fl (wL L).val (2 * t1.val + 1) (2 * k.val + 1)) 0 14 :=
        acc_step d L fl tab (wL L).val (2 * t1.val + 1) (2 * k.val + 1) 1 _ hRB ⟨13, by decide⟩ ⟨0, by decide⟩ _ rfl _ hw_v2135_3 _ (k1_off106_form ..) _ hc16
      have s_B0_14 : addf (AccMath.accVec (rowF fl tab (wL L).val (2 * t1.val + 1) (2 * k.val + 1)) (offF fl (wL L).val (2 * t1.val + 1) (2 * k.val + 1)) 0 14) (shapeCast S16 (pair1_lt.sl.v2177_3 d L tab k r g1 g2 hR hin h9) hc16) = AccMath.accVec (rowF fl tab (wL L).val (2 * t1.val + 1) (2 * k.val + 1)) (offF fl (wL L).val (2 * t1.val + 1) (2 * k.val + 1)) 0 15 :=
        acc_step d L fl tab (wL L).val (2 * t1.val + 1) (2 * k.val + 1) 1 _ hRB ⟨14, by decide⟩ ⟨0, by decide⟩ _ rfl _ hw_v2171_3 _ (k1_off107_form ..) _ hc16
      have s_B0_15 : addf (AccMath.accVec (rowF fl tab (wL L).val (2 * t1.val + 1) (2 * k.val + 1)) (offF fl (wL L).val (2 * t1.val + 1) (2 * k.val + 1)) 0 15) (shapeCast S16 (pair1_lt.sl.v2213_3 d L tab k r g1 g2 hR hin h9) hc16) = AccMath.accVec (rowF fl tab (wL L).val (2 * t1.val + 1) (2 * k.val + 1)) (offF fl (wL L).val (2 * t1.val + 1) (2 * k.val + 1)) 0 16 :=
        acc_step d L fl tab (wL L).val (2 * t1.val + 1) (2 * k.val + 1) 1 _ hRB ⟨15, by decide⟩ ⟨0, by decide⟩ _ rfl _ hw_v2207_3 _ (k1_off108_form ..) _ hc16
      have s_B0_16 : addf (AccMath.accVec (rowF fl tab (wL L).val (2 * t1.val + 1) (2 * k.val + 1)) (offF fl (wL L).val (2 * t1.val + 1) (2 * k.val + 1)) 0 16) (shapeCast S16 (pair1_lt.sl.v1673_4 d L tab k r g1 g2 hR hin h9) hc16) = AccMath.accVec (rowF fl tab (wL L).val (2 * t1.val + 1) (2 * k.val + 1)) (offF fl (wL L).val (2 * t1.val + 1) (2 * k.val + 1)) 0 17 :=
        acc_step d L fl tab (wL L).val (2 * t1.val + 1) (2 * k.val + 1) 1 _ hRB ⟨16, by decide⟩ ⟨0, by decide⟩ _ rfl _ hw_v1667_4 _ (k1_off93_form ..) _ hc16
      have s_B0_17 : addf (AccMath.accVec (rowF fl tab (wL L).val (2 * t1.val + 1) (2 * k.val + 1)) (offF fl (wL L).val (2 * t1.val + 1) (2 * k.val + 1)) 0 17) (shapeCast S16 (pair1_lt.sl.v1709_4 d L tab k r g1 g2 hR hin h9) hc16) = AccMath.accVec (rowF fl tab (wL L).val (2 * t1.val + 1) (2 * k.val + 1)) (offF fl (wL L).val (2 * t1.val + 1) (2 * k.val + 1)) 0 18 :=
        acc_step d L fl tab (wL L).val (2 * t1.val + 1) (2 * k.val + 1) 1 _ hRB ⟨17, by decide⟩ ⟨0, by decide⟩ _ rfl _ hw_v1703_4 _ (k1_off94_form ..) _ hc16
      have s_B0_18 : addf (AccMath.accVec (rowF fl tab (wL L).val (2 * t1.val + 1) (2 * k.val + 1)) (offF fl (wL L).val (2 * t1.val + 1) (2 * k.val + 1)) 0 18) (shapeCast S16 (pair1_lt.sl.v1745_4 d L tab k r g1 g2 hR hin h9) hc16) = AccMath.accVec (rowF fl tab (wL L).val (2 * t1.val + 1) (2 * k.val + 1)) (offF fl (wL L).val (2 * t1.val + 1) (2 * k.val + 1)) 0 19 :=
        acc_step d L fl tab (wL L).val (2 * t1.val + 1) (2 * k.val + 1) 1 _ hRB ⟨18, by decide⟩ ⟨0, by decide⟩ _ rfl _ hw_v1739_4 _ (k1_off95_form ..) _ hc16
      have s_B0_19 : addf (AccMath.accVec (rowF fl tab (wL L).val (2 * t1.val + 1) (2 * k.val + 1)) (offF fl (wL L).val (2 * t1.val + 1) (2 * k.val + 1)) 0 19) (shapeCast S16 (pair1_lt.sl.v1781_4 d L tab k r g1 g2 hR hin h9) hc16) = AccMath.accVec (rowF fl tab (wL L).val (2 * t1.val + 1) (2 * k.val + 1)) (offF fl (wL L).val (2 * t1.val + 1) (2 * k.val + 1)) 0 20 :=
        acc_step d L fl tab (wL L).val (2 * t1.val + 1) (2 * k.val + 1) 1 _ hRB ⟨19, by decide⟩ ⟨0, by decide⟩ _ rfl _ hw_v1775_4 _ (k1_off96_form ..) _ hc16
      have s_B0_20 : addf (AccMath.accVec (rowF fl tab (wL L).val (2 * t1.val + 1) (2 * k.val + 1)) (offF fl (wL L).val (2 * t1.val + 1) (2 * k.val + 1)) 0 20) (shapeCast S16 (pair1_lt.sl.v1817_4 d L tab k r g1 g2 hR hin h9) hc16) = AccMath.accVec (rowF fl tab (wL L).val (2 * t1.val + 1) (2 * k.val + 1)) (offF fl (wL L).val (2 * t1.val + 1) (2 * k.val + 1)) 0 21 :=
        acc_step d L fl tab (wL L).val (2 * t1.val + 1) (2 * k.val + 1) 1 _ hRB ⟨20, by decide⟩ ⟨0, by decide⟩ _ rfl _ hw_v1811_4 _ (k1_off97_form ..) _ hc16
      have s_B0_21 : addf (AccMath.accVec (rowF fl tab (wL L).val (2 * t1.val + 1) (2 * k.val + 1)) (offF fl (wL L).val (2 * t1.val + 1) (2 * k.val + 1)) 0 21) (shapeCast S16 (pair1_lt.sl.v1853_4 d L tab k r g1 g2 hR hin h9) hc16) = AccMath.accVec (rowF fl tab (wL L).val (2 * t1.val + 1) (2 * k.val + 1)) (offF fl (wL L).val (2 * t1.val + 1) (2 * k.val + 1)) 0 22 :=
        acc_step d L fl tab (wL L).val (2 * t1.val + 1) (2 * k.val + 1) 1 _ hRB ⟨21, by decide⟩ ⟨0, by decide⟩ _ rfl _ hw_v1847_4 _ (k1_off98_form ..) _ hc16
      have s_B0_22 : addf (AccMath.accVec (rowF fl tab (wL L).val (2 * t1.val + 1) (2 * k.val + 1)) (offF fl (wL L).val (2 * t1.val + 1) (2 * k.val + 1)) 0 22) (shapeCast S16 (pair1_lt.sl.v1889_4 d L tab k r g1 g2 hR hin h9) hc16) = AccMath.accVec (rowF fl tab (wL L).val (2 * t1.val + 1) (2 * k.val + 1)) (offF fl (wL L).val (2 * t1.val + 1) (2 * k.val + 1)) 0 23 :=
        acc_step d L fl tab (wL L).val (2 * t1.val + 1) (2 * k.val + 1) 1 _ hRB ⟨22, by decide⟩ ⟨0, by decide⟩ _ rfl _ hw_v1883_4 _ (k1_off99_form ..) _ hc16
      have s_B0_23 : addf (AccMath.accVec (rowF fl tab (wL L).val (2 * t1.val + 1) (2 * k.val + 1)) (offF fl (wL L).val (2 * t1.val + 1) (2 * k.val + 1)) 0 23) (shapeCast S16 (pair1_lt.sl.v1925_4 d L tab k r g1 g2 hR hin h9) hc16) = AccMath.accVec (rowF fl tab (wL L).val (2 * t1.val + 1) (2 * k.val + 1)) (offF fl (wL L).val (2 * t1.val + 1) (2 * k.val + 1)) 0 24 :=
        acc_step d L fl tab (wL L).val (2 * t1.val + 1) (2 * k.val + 1) 1 _ hRB ⟨23, by decide⟩ ⟨0, by decide⟩ _ rfl _ hw_v1919_4 _ (k1_off100_form ..) _ hc16
      have s_B0_24 : addf (AccMath.accVec (rowF fl tab (wL L).val (2 * t1.val + 1) (2 * k.val + 1)) (offF fl (wL L).val (2 * t1.val + 1) (2 * k.val + 1)) 0 24) (shapeCast S16 (pair1_lt.sl.v1961_4 d L tab k r g1 g2 hR hin h9) hc16) = AccMath.accVec (rowF fl tab (wL L).val (2 * t1.val + 1) (2 * k.val + 1)) (offF fl (wL L).val (2 * t1.val + 1) (2 * k.val + 1)) 0 25 :=
        acc_step d L fl tab (wL L).val (2 * t1.val + 1) (2 * k.val + 1) 1 _ hRB ⟨24, by decide⟩ ⟨0, by decide⟩ _ rfl _ hw_v1955_4 _ (k1_off101_form ..) _ hc16
      have s_B0_25 : addf (AccMath.accVec (rowF fl tab (wL L).val (2 * t1.val + 1) (2 * k.val + 1)) (offF fl (wL L).val (2 * t1.val + 1) (2 * k.val + 1)) 0 25) (shapeCast S16 (pair1_lt.sl.v1997_4 d L tab k r g1 g2 hR hin h9) hc16) = AccMath.accVec (rowF fl tab (wL L).val (2 * t1.val + 1) (2 * k.val + 1)) (offF fl (wL L).val (2 * t1.val + 1) (2 * k.val + 1)) 0 26 :=
        acc_step d L fl tab (wL L).val (2 * t1.val + 1) (2 * k.val + 1) 1 _ hRB ⟨25, by decide⟩ ⟨0, by decide⟩ _ rfl _ hw_v1991_4 _ (k1_off102_form ..) _ hc16
      have s_B0_26 : addf (AccMath.accVec (rowF fl tab (wL L).val (2 * t1.val + 1) (2 * k.val + 1)) (offF fl (wL L).val (2 * t1.val + 1) (2 * k.val + 1)) 0 26) (shapeCast S16 (pair1_lt.sl.v2033_4 d L tab k r g1 g2 hR hin h9) hc16) = AccMath.accVec (rowF fl tab (wL L).val (2 * t1.val + 1) (2 * k.val + 1)) (offF fl (wL L).val (2 * t1.val + 1) (2 * k.val + 1)) 0 27 :=
        acc_step d L fl tab (wL L).val (2 * t1.val + 1) (2 * k.val + 1) 1 _ hRB ⟨26, by decide⟩ ⟨0, by decide⟩ _ rfl _ hw_v2027_4 _ (k1_off103_form ..) _ hc16
      have s_B0_27 : addf (AccMath.accVec (rowF fl tab (wL L).val (2 * t1.val + 1) (2 * k.val + 1)) (offF fl (wL L).val (2 * t1.val + 1) (2 * k.val + 1)) 0 27) (shapeCast S16 (pair1_lt.sl.v2069_4 d L tab k r g1 g2 hR hin h9) hc16) = AccMath.accVec (rowF fl tab (wL L).val (2 * t1.val + 1) (2 * k.val + 1)) (offF fl (wL L).val (2 * t1.val + 1) (2 * k.val + 1)) 0 28 :=
        acc_step d L fl tab (wL L).val (2 * t1.val + 1) (2 * k.val + 1) 1 _ hRB ⟨27, by decide⟩ ⟨0, by decide⟩ _ rfl _ hw_v2063_4 _ (k1_off104_form ..) _ hc16
      have s_B0_28 : addf (AccMath.accVec (rowF fl tab (wL L).val (2 * t1.val + 1) (2 * k.val + 1)) (offF fl (wL L).val (2 * t1.val + 1) (2 * k.val + 1)) 0 28) (shapeCast S16 (pair1_lt.sl.v2105_4 d L tab k r g1 g2 hR hin h9) hc16) = AccMath.accVec (rowF fl tab (wL L).val (2 * t1.val + 1) (2 * k.val + 1)) (offF fl (wL L).val (2 * t1.val + 1) (2 * k.val + 1)) 0 29 :=
        acc_step d L fl tab (wL L).val (2 * t1.val + 1) (2 * k.val + 1) 1 _ hRB ⟨28, by decide⟩ ⟨0, by decide⟩ _ rfl _ hw_v2099_4 _ (k1_off105_form ..) _ hc16
      have s_B0_29 : addf (AccMath.accVec (rowF fl tab (wL L).val (2 * t1.val + 1) (2 * k.val + 1)) (offF fl (wL L).val (2 * t1.val + 1) (2 * k.val + 1)) 0 29) (shapeCast S16 (pair1_lt.sl.v2141_4 d L tab k r g1 g2 hR hin h9) hc16) = AccMath.accVec (rowF fl tab (wL L).val (2 * t1.val + 1) (2 * k.val + 1)) (offF fl (wL L).val (2 * t1.val + 1) (2 * k.val + 1)) 0 30 :=
        acc_step d L fl tab (wL L).val (2 * t1.val + 1) (2 * k.val + 1) 1 _ hRB ⟨29, by decide⟩ ⟨0, by decide⟩ _ rfl _ hw_v2135_4 _ (k1_off106_form ..) _ hc16
      have s_B0_30 : addf (AccMath.accVec (rowF fl tab (wL L).val (2 * t1.val + 1) (2 * k.val + 1)) (offF fl (wL L).val (2 * t1.val + 1) (2 * k.val + 1)) 0 30) (shapeCast S16 (pair1_lt.sl.v2177_4 d L tab k r g1 g2 hR hin h9) hc16) = AccMath.accVec (rowF fl tab (wL L).val (2 * t1.val + 1) (2 * k.val + 1)) (offF fl (wL L).val (2 * t1.val + 1) (2 * k.val + 1)) 0 31 :=
        acc_step d L fl tab (wL L).val (2 * t1.val + 1) (2 * k.val + 1) 1 _ hRB ⟨30, by decide⟩ ⟨0, by decide⟩ _ rfl _ hw_v2171_4 _ (k1_off107_form ..) _ hc16
      have s_B0_31 : addf (AccMath.accVec (rowF fl tab (wL L).val (2 * t1.val + 1) (2 * k.val + 1)) (offF fl (wL L).val (2 * t1.val + 1) (2 * k.val + 1)) 0 31) (shapeCast S16 (pair1_lt.sl.v2213_4 d L tab k r g1 g2 hR hin h9) hc16) = AccMath.accVec (rowF fl tab (wL L).val (2 * t1.val + 1) (2 * k.val + 1)) (offF fl (wL L).val (2 * t1.val + 1) (2 * k.val + 1)) 0 32 :=
        acc_step d L fl tab (wL L).val (2 * t1.val + 1) (2 * k.val + 1) 1 _ hRB ⟨31, by decide⟩ ⟨0, by decide⟩ _ rfl _ hw_v2207_4 _ (k1_off108_form ..) _ hc16
      have s_B0_32 : addf (AccMath.accVec (rowF fl tab (wL L).val (2 * t1.val + 1) (2 * k.val + 1)) (offF fl (wL L).val (2 * t1.val + 1) (2 * k.val + 1)) 0 32) (shapeCast S16 (pair1_lt.sl.v1673_5 d L tab k r g1 g2 hR hin h9) hc16) = AccMath.accVec (rowF fl tab (wL L).val (2 * t1.val + 1) (2 * k.val + 1)) (offF fl (wL L).val (2 * t1.val + 1) (2 * k.val + 1)) 0 33 :=
        acc_step d L fl tab (wL L).val (2 * t1.val + 1) (2 * k.val + 1) 1 _ hRB ⟨32, by decide⟩ ⟨0, by decide⟩ _ rfl _ hw_v1667_5 _ (k1_off93_form ..) _ hc16
      have s_B0_33 : addf (AccMath.accVec (rowF fl tab (wL L).val (2 * t1.val + 1) (2 * k.val + 1)) (offF fl (wL L).val (2 * t1.val + 1) (2 * k.val + 1)) 0 33) (shapeCast S16 (pair1_lt.sl.v1709_5 d L tab k r g1 g2 hR hin h9) hc16) = AccMath.accVec (rowF fl tab (wL L).val (2 * t1.val + 1) (2 * k.val + 1)) (offF fl (wL L).val (2 * t1.val + 1) (2 * k.val + 1)) 0 34 :=
        acc_step d L fl tab (wL L).val (2 * t1.val + 1) (2 * k.val + 1) 1 _ hRB ⟨33, by decide⟩ ⟨0, by decide⟩ _ rfl _ hw_v1703_5 _ (k1_off94_form ..) _ hc16
      have s_B0_34 : addf (AccMath.accVec (rowF fl tab (wL L).val (2 * t1.val + 1) (2 * k.val + 1)) (offF fl (wL L).val (2 * t1.val + 1) (2 * k.val + 1)) 0 34) (shapeCast S16 (pair1_lt.sl.v1745_5 d L tab k r g1 g2 hR hin h9) hc16) = AccMath.accVec (rowF fl tab (wL L).val (2 * t1.val + 1) (2 * k.val + 1)) (offF fl (wL L).val (2 * t1.val + 1) (2 * k.val + 1)) 0 35 :=
        acc_step d L fl tab (wL L).val (2 * t1.val + 1) (2 * k.val + 1) 1 _ hRB ⟨34, by decide⟩ ⟨0, by decide⟩ _ rfl _ hw_v1739_5 _ (k1_off95_form ..) _ hc16
      have s_B0_35 : addf (AccMath.accVec (rowF fl tab (wL L).val (2 * t1.val + 1) (2 * k.val + 1)) (offF fl (wL L).val (2 * t1.val + 1) (2 * k.val + 1)) 0 35) (shapeCast S16 (pair1_lt.sl.v1781_5 d L tab k r g1 g2 hR hin h9) hc16) = AccMath.accVec (rowF fl tab (wL L).val (2 * t1.val + 1) (2 * k.val + 1)) (offF fl (wL L).val (2 * t1.val + 1) (2 * k.val + 1)) 0 36 :=
        acc_step d L fl tab (wL L).val (2 * t1.val + 1) (2 * k.val + 1) 1 _ hRB ⟨35, by decide⟩ ⟨0, by decide⟩ _ rfl _ hw_v1775_5 _ (k1_off96_form ..) _ hc16
      have s_B0_36 : addf (AccMath.accVec (rowF fl tab (wL L).val (2 * t1.val + 1) (2 * k.val + 1)) (offF fl (wL L).val (2 * t1.val + 1) (2 * k.val + 1)) 0 36) (shapeCast S16 (pair1_lt.sl.v1817_5 d L tab k r g1 g2 hR hin h9) hc16) = AccMath.accVec (rowF fl tab (wL L).val (2 * t1.val + 1) (2 * k.val + 1)) (offF fl (wL L).val (2 * t1.val + 1) (2 * k.val + 1)) 0 37 :=
        acc_step d L fl tab (wL L).val (2 * t1.val + 1) (2 * k.val + 1) 1 _ hRB ⟨36, by decide⟩ ⟨0, by decide⟩ _ rfl _ hw_v1811_5 _ (k1_off97_form ..) _ hc16
      have s_B0_37 : addf (AccMath.accVec (rowF fl tab (wL L).val (2 * t1.val + 1) (2 * k.val + 1)) (offF fl (wL L).val (2 * t1.val + 1) (2 * k.val + 1)) 0 37) (shapeCast S16 (pair1_lt.sl.v1853_5 d L tab k r g1 g2 hR hin h9) hc16) = AccMath.accVec (rowF fl tab (wL L).val (2 * t1.val + 1) (2 * k.val + 1)) (offF fl (wL L).val (2 * t1.val + 1) (2 * k.val + 1)) 0 38 :=
        acc_step d L fl tab (wL L).val (2 * t1.val + 1) (2 * k.val + 1) 1 _ hRB ⟨37, by decide⟩ ⟨0, by decide⟩ _ rfl _ hw_v1847_5 _ (k1_off98_form ..) _ hc16
      have s_B0_38 : addf (AccMath.accVec (rowF fl tab (wL L).val (2 * t1.val + 1) (2 * k.val + 1)) (offF fl (wL L).val (2 * t1.val + 1) (2 * k.val + 1)) 0 38) (shapeCast S16 (pair1_lt.sl.v1889_5 d L tab k r g1 g2 hR hin h9) hc16) = AccMath.accVec (rowF fl tab (wL L).val (2 * t1.val + 1) (2 * k.val + 1)) (offF fl (wL L).val (2 * t1.val + 1) (2 * k.val + 1)) 0 39 :=
        acc_step d L fl tab (wL L).val (2 * t1.val + 1) (2 * k.val + 1) 1 _ hRB ⟨38, by decide⟩ ⟨0, by decide⟩ _ rfl _ hw_v1883_5 _ (k1_off99_form ..) _ hc16
      have s_B0_39 : addf (AccMath.accVec (rowF fl tab (wL L).val (2 * t1.val + 1) (2 * k.val + 1)) (offF fl (wL L).val (2 * t1.val + 1) (2 * k.val + 1)) 0 39) (shapeCast S16 (pair1_lt.sl.v1925_5 d L tab k r g1 g2 hR hin h9) hc16) = AccMath.accVec (rowF fl tab (wL L).val (2 * t1.val + 1) (2 * k.val + 1)) (offF fl (wL L).val (2 * t1.val + 1) (2 * k.val + 1)) 0 40 :=
        acc_step d L fl tab (wL L).val (2 * t1.val + 1) (2 * k.val + 1) 1 _ hRB ⟨39, by decide⟩ ⟨0, by decide⟩ _ rfl _ hw_v1919_5 _ (k1_off100_form ..) _ hc16
      have s_B0_40 : addf (AccMath.accVec (rowF fl tab (wL L).val (2 * t1.val + 1) (2 * k.val + 1)) (offF fl (wL L).val (2 * t1.val + 1) (2 * k.val + 1)) 0 40) (shapeCast S16 (pair1_lt.sl.v1961_5 d L tab k r g1 g2 hR hin h9) hc16) = AccMath.accVec (rowF fl tab (wL L).val (2 * t1.val + 1) (2 * k.val + 1)) (offF fl (wL L).val (2 * t1.val + 1) (2 * k.val + 1)) 0 41 :=
        acc_step d L fl tab (wL L).val (2 * t1.val + 1) (2 * k.val + 1) 1 _ hRB ⟨40, by decide⟩ ⟨0, by decide⟩ _ rfl _ hw_v1955_5 _ (k1_off101_form ..) _ hc16
      have s_B0_41 : addf (AccMath.accVec (rowF fl tab (wL L).val (2 * t1.val + 1) (2 * k.val + 1)) (offF fl (wL L).val (2 * t1.val + 1) (2 * k.val + 1)) 0 41) (shapeCast S16 (pair1_lt.sl.v1997_5 d L tab k r g1 g2 hR hin h9) hc16) = AccMath.accVec (rowF fl tab (wL L).val (2 * t1.val + 1) (2 * k.val + 1)) (offF fl (wL L).val (2 * t1.val + 1) (2 * k.val + 1)) 0 42 :=
        acc_step d L fl tab (wL L).val (2 * t1.val + 1) (2 * k.val + 1) 1 _ hRB ⟨41, by decide⟩ ⟨0, by decide⟩ _ rfl _ hw_v1991_5 _ (k1_off102_form ..) _ hc16
      have s_B0_42 : addf (AccMath.accVec (rowF fl tab (wL L).val (2 * t1.val + 1) (2 * k.val + 1)) (offF fl (wL L).val (2 * t1.val + 1) (2 * k.val + 1)) 0 42) (shapeCast S16 (pair1_lt.sl.v2033_5 d L tab k r g1 g2 hR hin h9) hc16) = AccMath.accVec (rowF fl tab (wL L).val (2 * t1.val + 1) (2 * k.val + 1)) (offF fl (wL L).val (2 * t1.val + 1) (2 * k.val + 1)) 0 43 :=
        acc_step d L fl tab (wL L).val (2 * t1.val + 1) (2 * k.val + 1) 1 _ hRB ⟨42, by decide⟩ ⟨0, by decide⟩ _ rfl _ hw_v2027_5 _ (k1_off103_form ..) _ hc16
      have s_B0_43 : addf (AccMath.accVec (rowF fl tab (wL L).val (2 * t1.val + 1) (2 * k.val + 1)) (offF fl (wL L).val (2 * t1.val + 1) (2 * k.val + 1)) 0 43) (shapeCast S16 (pair1_lt.sl.v2069_5 d L tab k r g1 g2 hR hin h9) hc16) = AccMath.accVec (rowF fl tab (wL L).val (2 * t1.val + 1) (2 * k.val + 1)) (offF fl (wL L).val (2 * t1.val + 1) (2 * k.val + 1)) 0 44 :=
        acc_step d L fl tab (wL L).val (2 * t1.val + 1) (2 * k.val + 1) 1 _ hRB ⟨43, by decide⟩ ⟨0, by decide⟩ _ rfl _ hw_v2063_5 _ (k1_off104_form ..) _ hc16
      have s_B0_44 : addf (AccMath.accVec (rowF fl tab (wL L).val (2 * t1.val + 1) (2 * k.val + 1)) (offF fl (wL L).val (2 * t1.val + 1) (2 * k.val + 1)) 0 44) (shapeCast S16 (pair1_lt.sl.v2105_5 d L tab k r g1 g2 hR hin h9) hc16) = AccMath.accVec (rowF fl tab (wL L).val (2 * t1.val + 1) (2 * k.val + 1)) (offF fl (wL L).val (2 * t1.val + 1) (2 * k.val + 1)) 0 45 :=
        acc_step d L fl tab (wL L).val (2 * t1.val + 1) (2 * k.val + 1) 1 _ hRB ⟨44, by decide⟩ ⟨0, by decide⟩ _ rfl _ hw_v2099_5 _ (k1_off105_form ..) _ hc16
      have s_B0_45 : addf (AccMath.accVec (rowF fl tab (wL L).val (2 * t1.val + 1) (2 * k.val + 1)) (offF fl (wL L).val (2 * t1.val + 1) (2 * k.val + 1)) 0 45) (shapeCast S16 (pair1_lt.sl.v2141_5 d L tab k r g1 g2 hR hin h9) hc16) = AccMath.accVec (rowF fl tab (wL L).val (2 * t1.val + 1) (2 * k.val + 1)) (offF fl (wL L).val (2 * t1.val + 1) (2 * k.val + 1)) 0 46 :=
        acc_step d L fl tab (wL L).val (2 * t1.val + 1) (2 * k.val + 1) 1 _ hRB ⟨45, by decide⟩ ⟨0, by decide⟩ _ rfl _ hw_v2135_5 _ (k1_off106_form ..) _ hc16
      have s_B0_46 : addf (AccMath.accVec (rowF fl tab (wL L).val (2 * t1.val + 1) (2 * k.val + 1)) (offF fl (wL L).val (2 * t1.val + 1) (2 * k.val + 1)) 0 46) (shapeCast S16 (pair1_lt.sl.v2177_5 d L tab k r g1 g2 hR hin h9) hc16) = AccMath.accVec (rowF fl tab (wL L).val (2 * t1.val + 1) (2 * k.val + 1)) (offF fl (wL L).val (2 * t1.val + 1) (2 * k.val + 1)) 0 47 :=
        acc_step d L fl tab (wL L).val (2 * t1.val + 1) (2 * k.val + 1) 1 _ hRB ⟨46, by decide⟩ ⟨0, by decide⟩ _ rfl _ hw_v2171_5 _ (k1_off107_form ..) _ hc16
      have s_B0_47 : addf (AccMath.accVec (rowF fl tab (wL L).val (2 * t1.val + 1) (2 * k.val + 1)) (offF fl (wL L).val (2 * t1.val + 1) (2 * k.val + 1)) 0 47) (shapeCast S16 (pair1_lt.sl.v2213_5 d L tab k r g1 g2 hR hin h9) hc16) = AccMath.accVec (rowF fl tab (wL L).val (2 * t1.val + 1) (2 * k.val + 1)) (offF fl (wL L).val (2 * t1.val + 1) (2 * k.val + 1)) 0 48 :=
        acc_step d L fl tab (wL L).val (2 * t1.val + 1) (2 * k.val + 1) 1 _ hRB ⟨47, by decide⟩ ⟨0, by decide⟩ _ rfl _ hw_v2207_5 _ (k1_off108_form ..) _ hc16
      have s_B0_48 : addf (AccMath.accVec (rowF fl tab (wL L).val (2 * t1.val + 1) (2 * k.val + 1)) (offF fl (wL L).val (2 * t1.val + 1) (2 * k.val + 1)) 0 48) (shapeCast S16 (pair1_lt.sl.v1578 d L tab k r g1 g2 hR hin h9) hc16) = AccMath.accVec (rowF fl tab (wL L).val (2 * t1.val + 1) (2 * k.val + 1)) (offF fl (wL L).val (2 * t1.val + 1) (2 * k.val + 1)) 0 49 :=
        acc_step d L fl tab (wL L).val (2 * t1.val + 1) (2 * k.val + 1) 1 _ hRB ⟨48, by decide⟩ ⟨0, by decide⟩ _ rfl _ hw_v1572 _ (k1_off110_form ..) _ hc16
      have s_B0_49 : addf (AccMath.accVec (rowF fl tab (wL L).val (2 * t1.val + 1) (2 * k.val + 1)) (offF fl (wL L).val (2 * t1.val + 1) (2 * k.val + 1)) 0 49) (shapeCast S16 (pair1_lt.sl.v1612 d L tab k r g1 g2 hR hin h9) hc16) = AccMath.accVec (rowF fl tab (wL L).val (2 * t1.val + 1) (2 * k.val + 1)) (offF fl (wL L).val (2 * t1.val + 1) (2 * k.val + 1)) 0 50 :=
        acc_step d L fl tab (wL L).val (2 * t1.val + 1) (2 * k.val + 1) 1 _ hRB ⟨49, by decide⟩ ⟨0, by decide⟩ _ rfl _ hw_v1606 _ (k1_off111_form ..) _ hc16
      have hP_B0 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val + 1)) (offF fl (wL L).val (2 * t1.val + 1) (2 * k.val + 1)) 0 0) (shapeCast S16 (pair1_lt.sl.v1673_3 d L tab k r g1 g2 hR hin h9) hc16)) (shapeCast S16 (pair1_lt.sl.v1709_3 d L tab k r g1 g2 hR hin h9) hc16)) (shapeCast S16 (pair1_lt.sl.v1745_3 d L tab k r g1 g2 hR hin h9) hc16)) (shapeCast S16 (pair1_lt.sl.v1781_3 d L tab k r g1 g2 hR hin h9) hc16)) (shapeCast S16 (pair1_lt.sl.v1817_3 d L tab k r g1 g2 hR hin h9) hc16)) (shapeCast S16 (pair1_lt.sl.v1853_3 d L tab k r g1 g2 hR hin h9) hc16)) (shapeCast S16 (pair1_lt.sl.v1889_3 d L tab k r g1 g2 hR hin h9) hc16)) (shapeCast S16 (pair1_lt.sl.v1925_3 d L tab k r g1 g2 hR hin h9) hc16)) (shapeCast S16 (pair1_lt.sl.v1961_3 d L tab k r g1 g2 hR hin h9) hc16)) (shapeCast S16 (pair1_lt.sl.v1997_3 d L tab k r g1 g2 hR hin h9) hc16)) (shapeCast S16 (pair1_lt.sl.v2033_3 d L tab k r g1 g2 hR hin h9) hc16)) (shapeCast S16 (pair1_lt.sl.v2069_3 d L tab k r g1 g2 hR hin h9) hc16)) (shapeCast S16 (pair1_lt.sl.v2105_3 d L tab k r g1 g2 hR hin h9) hc16)) (shapeCast S16 (pair1_lt.sl.v2141_3 d L tab k r g1 g2 hR hin h9) hc16)) (shapeCast S16 (pair1_lt.sl.v2177_3 d L tab k r g1 g2 hR hin h9) hc16)) (shapeCast S16 (pair1_lt.sl.v2213_3 d L tab k r g1 g2 hR hin h9) hc16)) (shapeCast S16 (pair1_lt.sl.v1673_4 d L tab k r g1 g2 hR hin h9) hc16)) (shapeCast S16 (pair1_lt.sl.v1709_4 d L tab k r g1 g2 hR hin h9) hc16)) (shapeCast S16 (pair1_lt.sl.v1745_4 d L tab k r g1 g2 hR hin h9) hc16)) (shapeCast S16 (pair1_lt.sl.v1781_4 d L tab k r g1 g2 hR hin h9) hc16)) (shapeCast S16 (pair1_lt.sl.v1817_4 d L tab k r g1 g2 hR hin h9) hc16)) (shapeCast S16 (pair1_lt.sl.v1853_4 d L tab k r g1 g2 hR hin h9) hc16)) (shapeCast S16 (pair1_lt.sl.v1889_4 d L tab k r g1 g2 hR hin h9) hc16)) (shapeCast S16 (pair1_lt.sl.v1925_4 d L tab k r g1 g2 hR hin h9) hc16)) (shapeCast S16 (pair1_lt.sl.v1961_4 d L tab k r g1 g2 hR hin h9) hc16)) (shapeCast S16 (pair1_lt.sl.v1997_4 d L tab k r g1 g2 hR hin h9) hc16)) (shapeCast S16 (pair1_lt.sl.v2033_4 d L tab k r g1 g2 hR hin h9) hc16)) (shapeCast S16 (pair1_lt.sl.v2069_4 d L tab k r g1 g2 hR hin h9) hc16)) (shapeCast S16 (pair1_lt.sl.v2105_4 d L tab k r g1 g2 hR hin h9) hc16)) (shapeCast S16 (pair1_lt.sl.v2141_4 d L tab k r g1 g2 hR hin h9) hc16)) (shapeCast S16 (pair1_lt.sl.v2177_4 d L tab k r g1 g2 hR hin h9) hc16)) (shapeCast S16 (pair1_lt.sl.v2213_4 d L tab k r g1 g2 hR hin h9) hc16)) (shapeCast S16 (pair1_lt.sl.v1673_5 d L tab k r g1 g2 hR hin h9) hc16)) (shapeCast S16 (pair1_lt.sl.v1709_5 d L tab k r g1 g2 hR hin h9) hc16)) (shapeCast S16 (pair1_lt.sl.v1745_5 d L tab k r g1 g2 hR hin h9) hc16)) (shapeCast S16 (pair1_lt.sl.v1781_5 d L tab k r g1 g2 hR hin h9) hc16)) (shapeCast S16 (pair1_lt.sl.v1817_5 d L tab k r g1 g2 hR hin h9) hc16)) (shapeCast S16 (pair1_lt.sl.v1853_5 d L tab k r g1 g2 hR hin h9) hc16)) (shapeCast S16 (pair1_lt.sl.v1889_5 d L tab k r g1 g2 hR hin h9) hc16)) (shapeCast S16 (pair1_lt.sl.v1925_5 d L tab k r g1 g2 hR hin h9) hc16)) (shapeCast S16 (pair1_lt.sl.v1961_5 d L tab k r g1 g2 hR hin h9) hc16)) (shapeCast S16 (pair1_lt.sl.v1997_5 d L tab k r g1 g2 hR hin h9) hc16)) (shapeCast S16 (pair1_lt.sl.v2033_5 d L tab k r g1 g2 hR hin h9) hc16)) (shapeCast S16 (pair1_lt.sl.v2069_5 d L tab k r g1 g2 hR hin h9) hc16)) (shapeCast S16 (pair1_lt.sl.v2105_5 d L tab k r g1 g2 hR hin h9) hc16)) (shapeCast S16 (pair1_lt.sl.v2141_5 d L tab k r g1 g2 hR hin h9) hc16)) (shapeCast S16 (pair1_lt.sl.v2177_5 d L tab k r g1 g2 hR hin h9) hc16)) (shapeCast S16 (pair1_lt.sl.v2213_5 d L tab k r g1 g2 hR hin h9) hc16)) (shapeCast S16 (pair1_lt.sl.v1578 d L tab k r g1 g2 hR hin h9) hc16)) (shapeCast S16 (pair1_lt.sl.v1612 d L tab k r g1 g2 hR hin h9) hc16)) hc1 x = Spec.bagPartial fl tab (128 * (wL L).val + 16 * (2 * t1.val + 1) + (2 * k.val + 1)) (16 * 0 + (x 2).val) 50 := fun x => by
        rw [s_B0_0, s_B0_1, s_B0_2, s_B0_3, s_B0_4, s_B0_5, s_B0_6, s_B0_7, s_B0_8, s_B0_9, s_B0_10, s_B0_11, s_B0_12, s_B0_13, s_B0_14, s_B0_15, s_B0_16, s_B0_17, s_B0_18, s_B0_19, s_B0_20, s_B0_21, s_B0_22, s_B0_23, s_B0_24, s_B0_25, s_B0_26, s_B0_27, s_B0_28, s_B0_29, s_B0_30, s_B0_31, s_B0_32, s_B0_33, s_B0_34, s_B0_35, s_B0_36, s_B0_37, s_B0_38, s_B0_39, s_B0_40, s_B0_41, s_B0_42, s_B0_43, s_B0_44, s_B0_45, s_B0_46, s_B0_47, s_B0_48, s_B0_49]
        exact payload_ok fl tab (wL L).val (2 * t1.val + 1) (2 * k.val + 1) ⟨0, by decide⟩ hc1 x
      have s_B1_0 : addf (AccMath.accVec (rowF fl tab (wL L).val (2 * t1.val + 1) (2 * k.val + 1)) (offF fl (wL L).val (2 * t1.val + 1) (2 * k.val + 1)) 1 0) (shapeCast S16 (pair1_lt.sl.v1681_3 d L tab k r g1 g2 hR hin h9) hc16) = AccMath.accVec (rowF fl tab (wL L).val (2 * t1.val + 1) (2 * k.val + 1)) (offF fl (wL L).val (2 * t1.val + 1) (2 * k.val + 1)) 1 1 :=
        acc_step d L fl tab (wL L).val (2 * t1.val + 1) (2 * k.val + 1) 1 _ hRB ⟨0, by decide⟩ ⟨1, by decide⟩ _ rfl _ hw_v1667_3 _ (k1_off93_form ..) _ hc16
      have s_B1_1 : addf (AccMath.accVec (rowF fl tab (wL L).val (2 * t1.val + 1) (2 * k.val + 1)) (offF fl (wL L).val (2 * t1.val + 1) (2 * k.val + 1)) 1 1) (shapeCast S16 (pair1_lt.sl.v1717_3 d L tab k r g1 g2 hR hin h9) hc16) = AccMath.accVec (rowF fl tab (wL L).val (2 * t1.val + 1) (2 * k.val + 1)) (offF fl (wL L).val (2 * t1.val + 1) (2 * k.val + 1)) 1 2 :=
        acc_step d L fl tab (wL L).val (2 * t1.val + 1) (2 * k.val + 1) 1 _ hRB ⟨1, by decide⟩ ⟨1, by decide⟩ _ rfl _ hw_v1703_3 _ (k1_off94_form ..) _ hc16
      have s_B1_2 : addf (AccMath.accVec (rowF fl tab (wL L).val (2 * t1.val + 1) (2 * k.val + 1)) (offF fl (wL L).val (2 * t1.val + 1) (2 * k.val + 1)) 1 2) (shapeCast S16 (pair1_lt.sl.v1753_3 d L tab k r g1 g2 hR hin h9) hc16) = AccMath.accVec (rowF fl tab (wL L).val (2 * t1.val + 1) (2 * k.val + 1)) (offF fl (wL L).val (2 * t1.val + 1) (2 * k.val + 1)) 1 3 :=
        acc_step d L fl tab (wL L).val (2 * t1.val + 1) (2 * k.val + 1) 1 _ hRB ⟨2, by decide⟩ ⟨1, by decide⟩ _ rfl _ hw_v1739_3 _ (k1_off95_form ..) _ hc16
      have s_B1_3 : addf (AccMath.accVec (rowF fl tab (wL L).val (2 * t1.val + 1) (2 * k.val + 1)) (offF fl (wL L).val (2 * t1.val + 1) (2 * k.val + 1)) 1 3) (shapeCast S16 (pair1_lt.sl.v1789_3 d L tab k r g1 g2 hR hin h9) hc16) = AccMath.accVec (rowF fl tab (wL L).val (2 * t1.val + 1) (2 * k.val + 1)) (offF fl (wL L).val (2 * t1.val + 1) (2 * k.val + 1)) 1 4 :=
        acc_step d L fl tab (wL L).val (2 * t1.val + 1) (2 * k.val + 1) 1 _ hRB ⟨3, by decide⟩ ⟨1, by decide⟩ _ rfl _ hw_v1775_3 _ (k1_off96_form ..) _ hc16
      have s_B1_4 : addf (AccMath.accVec (rowF fl tab (wL L).val (2 * t1.val + 1) (2 * k.val + 1)) (offF fl (wL L).val (2 * t1.val + 1) (2 * k.val + 1)) 1 4) (shapeCast S16 (pair1_lt.sl.v1825_3 d L tab k r g1 g2 hR hin h9) hc16) = AccMath.accVec (rowF fl tab (wL L).val (2 * t1.val + 1) (2 * k.val + 1)) (offF fl (wL L).val (2 * t1.val + 1) (2 * k.val + 1)) 1 5 :=
        acc_step d L fl tab (wL L).val (2 * t1.val + 1) (2 * k.val + 1) 1 _ hRB ⟨4, by decide⟩ ⟨1, by decide⟩ _ rfl _ hw_v1811_3 _ (k1_off97_form ..) _ hc16
      have s_B1_5 : addf (AccMath.accVec (rowF fl tab (wL L).val (2 * t1.val + 1) (2 * k.val + 1)) (offF fl (wL L).val (2 * t1.val + 1) (2 * k.val + 1)) 1 5) (shapeCast S16 (pair1_lt.sl.v1861_3 d L tab k r g1 g2 hR hin h9) hc16) = AccMath.accVec (rowF fl tab (wL L).val (2 * t1.val + 1) (2 * k.val + 1)) (offF fl (wL L).val (2 * t1.val + 1) (2 * k.val + 1)) 1 6 :=
        acc_step d L fl tab (wL L).val (2 * t1.val + 1) (2 * k.val + 1) 1 _ hRB ⟨5, by decide⟩ ⟨1, by decide⟩ _ rfl _ hw_v1847_3 _ (k1_off98_form ..) _ hc16
      have s_B1_6 : addf (AccMath.accVec (rowF fl tab (wL L).val (2 * t1.val + 1) (2 * k.val + 1)) (offF fl (wL L).val (2 * t1.val + 1) (2 * k.val + 1)) 1 6) (shapeCast S16 (pair1_lt.sl.v1897_3 d L tab k r g1 g2 hR hin h9) hc16) = AccMath.accVec (rowF fl tab (wL L).val (2 * t1.val + 1) (2 * k.val + 1)) (offF fl (wL L).val (2 * t1.val + 1) (2 * k.val + 1)) 1 7 :=
        acc_step d L fl tab (wL L).val (2 * t1.val + 1) (2 * k.val + 1) 1 _ hRB ⟨6, by decide⟩ ⟨1, by decide⟩ _ rfl _ hw_v1883_3 _ (k1_off99_form ..) _ hc16
      have s_B1_7 : addf (AccMath.accVec (rowF fl tab (wL L).val (2 * t1.val + 1) (2 * k.val + 1)) (offF fl (wL L).val (2 * t1.val + 1) (2 * k.val + 1)) 1 7) (shapeCast S16 (pair1_lt.sl.v1933_3 d L tab k r g1 g2 hR hin h9) hc16) = AccMath.accVec (rowF fl tab (wL L).val (2 * t1.val + 1) (2 * k.val + 1)) (offF fl (wL L).val (2 * t1.val + 1) (2 * k.val + 1)) 1 8 :=
        acc_step d L fl tab (wL L).val (2 * t1.val + 1) (2 * k.val + 1) 1 _ hRB ⟨7, by decide⟩ ⟨1, by decide⟩ _ rfl _ hw_v1919_3 _ (k1_off100_form ..) _ hc16
      have s_B1_8 : addf (AccMath.accVec (rowF fl tab (wL L).val (2 * t1.val + 1) (2 * k.val + 1)) (offF fl (wL L).val (2 * t1.val + 1) (2 * k.val + 1)) 1 8) (shapeCast S16 (pair1_lt.sl.v1969_3 d L tab k r g1 g2 hR hin h9) hc16) = AccMath.accVec (rowF fl tab (wL L).val (2 * t1.val + 1) (2 * k.val + 1)) (offF fl (wL L).val (2 * t1.val + 1) (2 * k.val + 1)) 1 9 :=
        acc_step d L fl tab (wL L).val (2 * t1.val + 1) (2 * k.val + 1) 1 _ hRB ⟨8, by decide⟩ ⟨1, by decide⟩ _ rfl _ hw_v1955_3 _ (k1_off101_form ..) _ hc16
      have s_B1_9 : addf (AccMath.accVec (rowF fl tab (wL L).val (2 * t1.val + 1) (2 * k.val + 1)) (offF fl (wL L).val (2 * t1.val + 1) (2 * k.val + 1)) 1 9) (shapeCast S16 (pair1_lt.sl.v2005_3 d L tab k r g1 g2 hR hin h9) hc16) = AccMath.accVec (rowF fl tab (wL L).val (2 * t1.val + 1) (2 * k.val + 1)) (offF fl (wL L).val (2 * t1.val + 1) (2 * k.val + 1)) 1 10 :=
        acc_step d L fl tab (wL L).val (2 * t1.val + 1) (2 * k.val + 1) 1 _ hRB ⟨9, by decide⟩ ⟨1, by decide⟩ _ rfl _ hw_v1991_3 _ (k1_off102_form ..) _ hc16
      have s_B1_10 : addf (AccMath.accVec (rowF fl tab (wL L).val (2 * t1.val + 1) (2 * k.val + 1)) (offF fl (wL L).val (2 * t1.val + 1) (2 * k.val + 1)) 1 10) (shapeCast S16 (pair1_lt.sl.v2041_3 d L tab k r g1 g2 hR hin h9) hc16) = AccMath.accVec (rowF fl tab (wL L).val (2 * t1.val + 1) (2 * k.val + 1)) (offF fl (wL L).val (2 * t1.val + 1) (2 * k.val + 1)) 1 11 :=
        acc_step d L fl tab (wL L).val (2 * t1.val + 1) (2 * k.val + 1) 1 _ hRB ⟨10, by decide⟩ ⟨1, by decide⟩ _ rfl _ hw_v2027_3 _ (k1_off103_form ..) _ hc16
      have s_B1_11 : addf (AccMath.accVec (rowF fl tab (wL L).val (2 * t1.val + 1) (2 * k.val + 1)) (offF fl (wL L).val (2 * t1.val + 1) (2 * k.val + 1)) 1 11) (shapeCast S16 (pair1_lt.sl.v2077_3 d L tab k r g1 g2 hR hin h9) hc16) = AccMath.accVec (rowF fl tab (wL L).val (2 * t1.val + 1) (2 * k.val + 1)) (offF fl (wL L).val (2 * t1.val + 1) (2 * k.val + 1)) 1 12 :=
        acc_step d L fl tab (wL L).val (2 * t1.val + 1) (2 * k.val + 1) 1 _ hRB ⟨11, by decide⟩ ⟨1, by decide⟩ _ rfl _ hw_v2063_3 _ (k1_off104_form ..) _ hc16
      have s_B1_12 : addf (AccMath.accVec (rowF fl tab (wL L).val (2 * t1.val + 1) (2 * k.val + 1)) (offF fl (wL L).val (2 * t1.val + 1) (2 * k.val + 1)) 1 12) (shapeCast S16 (pair1_lt.sl.v2113_3 d L tab k r g1 g2 hR hin h9) hc16) = AccMath.accVec (rowF fl tab (wL L).val (2 * t1.val + 1) (2 * k.val + 1)) (offF fl (wL L).val (2 * t1.val + 1) (2 * k.val + 1)) 1 13 :=
        acc_step d L fl tab (wL L).val (2 * t1.val + 1) (2 * k.val + 1) 1 _ hRB ⟨12, by decide⟩ ⟨1, by decide⟩ _ rfl _ hw_v2099_3 _ (k1_off105_form ..) _ hc16
      have s_B1_13 : addf (AccMath.accVec (rowF fl tab (wL L).val (2 * t1.val + 1) (2 * k.val + 1)) (offF fl (wL L).val (2 * t1.val + 1) (2 * k.val + 1)) 1 13) (shapeCast S16 (pair1_lt.sl.v2149_3 d L tab k r g1 g2 hR hin h9) hc16) = AccMath.accVec (rowF fl tab (wL L).val (2 * t1.val + 1) (2 * k.val + 1)) (offF fl (wL L).val (2 * t1.val + 1) (2 * k.val + 1)) 1 14 :=
        acc_step d L fl tab (wL L).val (2 * t1.val + 1) (2 * k.val + 1) 1 _ hRB ⟨13, by decide⟩ ⟨1, by decide⟩ _ rfl _ hw_v2135_3 _ (k1_off106_form ..) _ hc16
      have s_B1_14 : addf (AccMath.accVec (rowF fl tab (wL L).val (2 * t1.val + 1) (2 * k.val + 1)) (offF fl (wL L).val (2 * t1.val + 1) (2 * k.val + 1)) 1 14) (shapeCast S16 (pair1_lt.sl.v2185_3 d L tab k r g1 g2 hR hin h9) hc16) = AccMath.accVec (rowF fl tab (wL L).val (2 * t1.val + 1) (2 * k.val + 1)) (offF fl (wL L).val (2 * t1.val + 1) (2 * k.val + 1)) 1 15 :=
        acc_step d L fl tab (wL L).val (2 * t1.val + 1) (2 * k.val + 1) 1 _ hRB ⟨14, by decide⟩ ⟨1, by decide⟩ _ rfl _ hw_v2171_3 _ (k1_off107_form ..) _ hc16
      have s_B1_15 : addf (AccMath.accVec (rowF fl tab (wL L).val (2 * t1.val + 1) (2 * k.val + 1)) (offF fl (wL L).val (2 * t1.val + 1) (2 * k.val + 1)) 1 15) (shapeCast S16 (pair1_lt.sl.v2221_3 d L tab k r g1 g2 hR hin h9) hc16) = AccMath.accVec (rowF fl tab (wL L).val (2 * t1.val + 1) (2 * k.val + 1)) (offF fl (wL L).val (2 * t1.val + 1) (2 * k.val + 1)) 1 16 :=
        acc_step d L fl tab (wL L).val (2 * t1.val + 1) (2 * k.val + 1) 1 _ hRB ⟨15, by decide⟩ ⟨1, by decide⟩ _ rfl _ hw_v2207_3 _ (k1_off108_form ..) _ hc16
      have s_B1_16 : addf (AccMath.accVec (rowF fl tab (wL L).val (2 * t1.val + 1) (2 * k.val + 1)) (offF fl (wL L).val (2 * t1.val + 1) (2 * k.val + 1)) 1 16) (shapeCast S16 (pair1_lt.sl.v1681_4 d L tab k r g1 g2 hR hin h9) hc16) = AccMath.accVec (rowF fl tab (wL L).val (2 * t1.val + 1) (2 * k.val + 1)) (offF fl (wL L).val (2 * t1.val + 1) (2 * k.val + 1)) 1 17 :=
        acc_step d L fl tab (wL L).val (2 * t1.val + 1) (2 * k.val + 1) 1 _ hRB ⟨16, by decide⟩ ⟨1, by decide⟩ _ rfl _ hw_v1667_4 _ (k1_off93_form ..) _ hc16
      have s_B1_17 : addf (AccMath.accVec (rowF fl tab (wL L).val (2 * t1.val + 1) (2 * k.val + 1)) (offF fl (wL L).val (2 * t1.val + 1) (2 * k.val + 1)) 1 17) (shapeCast S16 (pair1_lt.sl.v1717_4 d L tab k r g1 g2 hR hin h9) hc16) = AccMath.accVec (rowF fl tab (wL L).val (2 * t1.val + 1) (2 * k.val + 1)) (offF fl (wL L).val (2 * t1.val + 1) (2 * k.val + 1)) 1 18 :=
        acc_step d L fl tab (wL L).val (2 * t1.val + 1) (2 * k.val + 1) 1 _ hRB ⟨17, by decide⟩ ⟨1, by decide⟩ _ rfl _ hw_v1703_4 _ (k1_off94_form ..) _ hc16
      have s_B1_18 : addf (AccMath.accVec (rowF fl tab (wL L).val (2 * t1.val + 1) (2 * k.val + 1)) (offF fl (wL L).val (2 * t1.val + 1) (2 * k.val + 1)) 1 18) (shapeCast S16 (pair1_lt.sl.v1753_4 d L tab k r g1 g2 hR hin h9) hc16) = AccMath.accVec (rowF fl tab (wL L).val (2 * t1.val + 1) (2 * k.val + 1)) (offF fl (wL L).val (2 * t1.val + 1) (2 * k.val + 1)) 1 19 :=
        acc_step d L fl tab (wL L).val (2 * t1.val + 1) (2 * k.val + 1) 1 _ hRB ⟨18, by decide⟩ ⟨1, by decide⟩ _ rfl _ hw_v1739_4 _ (k1_off95_form ..) _ hc16
      have s_B1_19 : addf (AccMath.accVec (rowF fl tab (wL L).val (2 * t1.val + 1) (2 * k.val + 1)) (offF fl (wL L).val (2 * t1.val + 1) (2 * k.val + 1)) 1 19) (shapeCast S16 (pair1_lt.sl.v1789_4 d L tab k r g1 g2 hR hin h9) hc16) = AccMath.accVec (rowF fl tab (wL L).val (2 * t1.val + 1) (2 * k.val + 1)) (offF fl (wL L).val (2 * t1.val + 1) (2 * k.val + 1)) 1 20 :=
        acc_step d L fl tab (wL L).val (2 * t1.val + 1) (2 * k.val + 1) 1 _ hRB ⟨19, by decide⟩ ⟨1, by decide⟩ _ rfl _ hw_v1775_4 _ (k1_off96_form ..) _ hc16
      have s_B1_20 : addf (AccMath.accVec (rowF fl tab (wL L).val (2 * t1.val + 1) (2 * k.val + 1)) (offF fl (wL L).val (2 * t1.val + 1) (2 * k.val + 1)) 1 20) (shapeCast S16 (pair1_lt.sl.v1825_4 d L tab k r g1 g2 hR hin h9) hc16) = AccMath.accVec (rowF fl tab (wL L).val (2 * t1.val + 1) (2 * k.val + 1)) (offF fl (wL L).val (2 * t1.val + 1) (2 * k.val + 1)) 1 21 :=
        acc_step d L fl tab (wL L).val (2 * t1.val + 1) (2 * k.val + 1) 1 _ hRB ⟨20, by decide⟩ ⟨1, by decide⟩ _ rfl _ hw_v1811_4 _ (k1_off97_form ..) _ hc16
      have s_B1_21 : addf (AccMath.accVec (rowF fl tab (wL L).val (2 * t1.val + 1) (2 * k.val + 1)) (offF fl (wL L).val (2 * t1.val + 1) (2 * k.val + 1)) 1 21) (shapeCast S16 (pair1_lt.sl.v1861_4 d L tab k r g1 g2 hR hin h9) hc16) = AccMath.accVec (rowF fl tab (wL L).val (2 * t1.val + 1) (2 * k.val + 1)) (offF fl (wL L).val (2 * t1.val + 1) (2 * k.val + 1)) 1 22 :=
        acc_step d L fl tab (wL L).val (2 * t1.val + 1) (2 * k.val + 1) 1 _ hRB ⟨21, by decide⟩ ⟨1, by decide⟩ _ rfl _ hw_v1847_4 _ (k1_off98_form ..) _ hc16
      have s_B1_22 : addf (AccMath.accVec (rowF fl tab (wL L).val (2 * t1.val + 1) (2 * k.val + 1)) (offF fl (wL L).val (2 * t1.val + 1) (2 * k.val + 1)) 1 22) (shapeCast S16 (pair1_lt.sl.v1897_4 d L tab k r g1 g2 hR hin h9) hc16) = AccMath.accVec (rowF fl tab (wL L).val (2 * t1.val + 1) (2 * k.val + 1)) (offF fl (wL L).val (2 * t1.val + 1) (2 * k.val + 1)) 1 23 :=
        acc_step d L fl tab (wL L).val (2 * t1.val + 1) (2 * k.val + 1) 1 _ hRB ⟨22, by decide⟩ ⟨1, by decide⟩ _ rfl _ hw_v1883_4 _ (k1_off99_form ..) _ hc16
      have s_B1_23 : addf (AccMath.accVec (rowF fl tab (wL L).val (2 * t1.val + 1) (2 * k.val + 1)) (offF fl (wL L).val (2 * t1.val + 1) (2 * k.val + 1)) 1 23) (shapeCast S16 (pair1_lt.sl.v1933_4 d L tab k r g1 g2 hR hin h9) hc16) = AccMath.accVec (rowF fl tab (wL L).val (2 * t1.val + 1) (2 * k.val + 1)) (offF fl (wL L).val (2 * t1.val + 1) (2 * k.val + 1)) 1 24 :=
        acc_step d L fl tab (wL L).val (2 * t1.val + 1) (2 * k.val + 1) 1 _ hRB ⟨23, by decide⟩ ⟨1, by decide⟩ _ rfl _ hw_v1919_4 _ (k1_off100_form ..) _ hc16
      have s_B1_24 : addf (AccMath.accVec (rowF fl tab (wL L).val (2 * t1.val + 1) (2 * k.val + 1)) (offF fl (wL L).val (2 * t1.val + 1) (2 * k.val + 1)) 1 24) (shapeCast S16 (pair1_lt.sl.v1969_4 d L tab k r g1 g2 hR hin h9) hc16) = AccMath.accVec (rowF fl tab (wL L).val (2 * t1.val + 1) (2 * k.val + 1)) (offF fl (wL L).val (2 * t1.val + 1) (2 * k.val + 1)) 1 25 :=
        acc_step d L fl tab (wL L).val (2 * t1.val + 1) (2 * k.val + 1) 1 _ hRB ⟨24, by decide⟩ ⟨1, by decide⟩ _ rfl _ hw_v1955_4 _ (k1_off101_form ..) _ hc16
      have s_B1_25 : addf (AccMath.accVec (rowF fl tab (wL L).val (2 * t1.val + 1) (2 * k.val + 1)) (offF fl (wL L).val (2 * t1.val + 1) (2 * k.val + 1)) 1 25) (shapeCast S16 (pair1_lt.sl.v2005_4 d L tab k r g1 g2 hR hin h9) hc16) = AccMath.accVec (rowF fl tab (wL L).val (2 * t1.val + 1) (2 * k.val + 1)) (offF fl (wL L).val (2 * t1.val + 1) (2 * k.val + 1)) 1 26 :=
        acc_step d L fl tab (wL L).val (2 * t1.val + 1) (2 * k.val + 1) 1 _ hRB ⟨25, by decide⟩ ⟨1, by decide⟩ _ rfl _ hw_v1991_4 _ (k1_off102_form ..) _ hc16
      have s_B1_26 : addf (AccMath.accVec (rowF fl tab (wL L).val (2 * t1.val + 1) (2 * k.val + 1)) (offF fl (wL L).val (2 * t1.val + 1) (2 * k.val + 1)) 1 26) (shapeCast S16 (pair1_lt.sl.v2041_4 d L tab k r g1 g2 hR hin h9) hc16) = AccMath.accVec (rowF fl tab (wL L).val (2 * t1.val + 1) (2 * k.val + 1)) (offF fl (wL L).val (2 * t1.val + 1) (2 * k.val + 1)) 1 27 :=
        acc_step d L fl tab (wL L).val (2 * t1.val + 1) (2 * k.val + 1) 1 _ hRB ⟨26, by decide⟩ ⟨1, by decide⟩ _ rfl _ hw_v2027_4 _ (k1_off103_form ..) _ hc16
      have s_B1_27 : addf (AccMath.accVec (rowF fl tab (wL L).val (2 * t1.val + 1) (2 * k.val + 1)) (offF fl (wL L).val (2 * t1.val + 1) (2 * k.val + 1)) 1 27) (shapeCast S16 (pair1_lt.sl.v2077_4 d L tab k r g1 g2 hR hin h9) hc16) = AccMath.accVec (rowF fl tab (wL L).val (2 * t1.val + 1) (2 * k.val + 1)) (offF fl (wL L).val (2 * t1.val + 1) (2 * k.val + 1)) 1 28 :=
        acc_step d L fl tab (wL L).val (2 * t1.val + 1) (2 * k.val + 1) 1 _ hRB ⟨27, by decide⟩ ⟨1, by decide⟩ _ rfl _ hw_v2063_4 _ (k1_off104_form ..) _ hc16
      have s_B1_28 : addf (AccMath.accVec (rowF fl tab (wL L).val (2 * t1.val + 1) (2 * k.val + 1)) (offF fl (wL L).val (2 * t1.val + 1) (2 * k.val + 1)) 1 28) (shapeCast S16 (pair1_lt.sl.v2113_4 d L tab k r g1 g2 hR hin h9) hc16) = AccMath.accVec (rowF fl tab (wL L).val (2 * t1.val + 1) (2 * k.val + 1)) (offF fl (wL L).val (2 * t1.val + 1) (2 * k.val + 1)) 1 29 :=
        acc_step d L fl tab (wL L).val (2 * t1.val + 1) (2 * k.val + 1) 1 _ hRB ⟨28, by decide⟩ ⟨1, by decide⟩ _ rfl _ hw_v2099_4 _ (k1_off105_form ..) _ hc16
      have s_B1_29 : addf (AccMath.accVec (rowF fl tab (wL L).val (2 * t1.val + 1) (2 * k.val + 1)) (offF fl (wL L).val (2 * t1.val + 1) (2 * k.val + 1)) 1 29) (shapeCast S16 (pair1_lt.sl.v2149_4 d L tab k r g1 g2 hR hin h9) hc16) = AccMath.accVec (rowF fl tab (wL L).val (2 * t1.val + 1) (2 * k.val + 1)) (offF fl (wL L).val (2 * t1.val + 1) (2 * k.val + 1)) 1 30 :=
        acc_step d L fl tab (wL L).val (2 * t1.val + 1) (2 * k.val + 1) 1 _ hRB ⟨29, by decide⟩ ⟨1, by decide⟩ _ rfl _ hw_v2135_4 _ (k1_off106_form ..) _ hc16
      have s_B1_30 : addf (AccMath.accVec (rowF fl tab (wL L).val (2 * t1.val + 1) (2 * k.val + 1)) (offF fl (wL L).val (2 * t1.val + 1) (2 * k.val + 1)) 1 30) (shapeCast S16 (pair1_lt.sl.v2185_4 d L tab k r g1 g2 hR hin h9) hc16) = AccMath.accVec (rowF fl tab (wL L).val (2 * t1.val + 1) (2 * k.val + 1)) (offF fl (wL L).val (2 * t1.val + 1) (2 * k.val + 1)) 1 31 :=
        acc_step d L fl tab (wL L).val (2 * t1.val + 1) (2 * k.val + 1) 1 _ hRB ⟨30, by decide⟩ ⟨1, by decide⟩ _ rfl _ hw_v2171_4 _ (k1_off107_form ..) _ hc16
      have s_B1_31 : addf (AccMath.accVec (rowF fl tab (wL L).val (2 * t1.val + 1) (2 * k.val + 1)) (offF fl (wL L).val (2 * t1.val + 1) (2 * k.val + 1)) 1 31) (shapeCast S16 (pair1_lt.sl.v2221_4 d L tab k r g1 g2 hR hin h9) hc16) = AccMath.accVec (rowF fl tab (wL L).val (2 * t1.val + 1) (2 * k.val + 1)) (offF fl (wL L).val (2 * t1.val + 1) (2 * k.val + 1)) 1 32 :=
        acc_step d L fl tab (wL L).val (2 * t1.val + 1) (2 * k.val + 1) 1 _ hRB ⟨31, by decide⟩ ⟨1, by decide⟩ _ rfl _ hw_v2207_4 _ (k1_off108_form ..) _ hc16
      have s_B1_32 : addf (AccMath.accVec (rowF fl tab (wL L).val (2 * t1.val + 1) (2 * k.val + 1)) (offF fl (wL L).val (2 * t1.val + 1) (2 * k.val + 1)) 1 32) (shapeCast S16 (pair1_lt.sl.v1681_5 d L tab k r g1 g2 hR hin h9) hc16) = AccMath.accVec (rowF fl tab (wL L).val (2 * t1.val + 1) (2 * k.val + 1)) (offF fl (wL L).val (2 * t1.val + 1) (2 * k.val + 1)) 1 33 :=
        acc_step d L fl tab (wL L).val (2 * t1.val + 1) (2 * k.val + 1) 1 _ hRB ⟨32, by decide⟩ ⟨1, by decide⟩ _ rfl _ hw_v1667_5 _ (k1_off93_form ..) _ hc16
      have s_B1_33 : addf (AccMath.accVec (rowF fl tab (wL L).val (2 * t1.val + 1) (2 * k.val + 1)) (offF fl (wL L).val (2 * t1.val + 1) (2 * k.val + 1)) 1 33) (shapeCast S16 (pair1_lt.sl.v1717_5 d L tab k r g1 g2 hR hin h9) hc16) = AccMath.accVec (rowF fl tab (wL L).val (2 * t1.val + 1) (2 * k.val + 1)) (offF fl (wL L).val (2 * t1.val + 1) (2 * k.val + 1)) 1 34 :=
        acc_step d L fl tab (wL L).val (2 * t1.val + 1) (2 * k.val + 1) 1 _ hRB ⟨33, by decide⟩ ⟨1, by decide⟩ _ rfl _ hw_v1703_5 _ (k1_off94_form ..) _ hc16
      have s_B1_34 : addf (AccMath.accVec (rowF fl tab (wL L).val (2 * t1.val + 1) (2 * k.val + 1)) (offF fl (wL L).val (2 * t1.val + 1) (2 * k.val + 1)) 1 34) (shapeCast S16 (pair1_lt.sl.v1753_5 d L tab k r g1 g2 hR hin h9) hc16) = AccMath.accVec (rowF fl tab (wL L).val (2 * t1.val + 1) (2 * k.val + 1)) (offF fl (wL L).val (2 * t1.val + 1) (2 * k.val + 1)) 1 35 :=
        acc_step d L fl tab (wL L).val (2 * t1.val + 1) (2 * k.val + 1) 1 _ hRB ⟨34, by decide⟩ ⟨1, by decide⟩ _ rfl _ hw_v1739_5 _ (k1_off95_form ..) _ hc16
      have s_B1_35 : addf (AccMath.accVec (rowF fl tab (wL L).val (2 * t1.val + 1) (2 * k.val + 1)) (offF fl (wL L).val (2 * t1.val + 1) (2 * k.val + 1)) 1 35) (shapeCast S16 (pair1_lt.sl.v1789_5 d L tab k r g1 g2 hR hin h9) hc16) = AccMath.accVec (rowF fl tab (wL L).val (2 * t1.val + 1) (2 * k.val + 1)) (offF fl (wL L).val (2 * t1.val + 1) (2 * k.val + 1)) 1 36 :=
        acc_step d L fl tab (wL L).val (2 * t1.val + 1) (2 * k.val + 1) 1 _ hRB ⟨35, by decide⟩ ⟨1, by decide⟩ _ rfl _ hw_v1775_5 _ (k1_off96_form ..) _ hc16
      have s_B1_36 : addf (AccMath.accVec (rowF fl tab (wL L).val (2 * t1.val + 1) (2 * k.val + 1)) (offF fl (wL L).val (2 * t1.val + 1) (2 * k.val + 1)) 1 36) (shapeCast S16 (pair1_lt.sl.v1825_5 d L tab k r g1 g2 hR hin h9) hc16) = AccMath.accVec (rowF fl tab (wL L).val (2 * t1.val + 1) (2 * k.val + 1)) (offF fl (wL L).val (2 * t1.val + 1) (2 * k.val + 1)) 1 37 :=
        acc_step d L fl tab (wL L).val (2 * t1.val + 1) (2 * k.val + 1) 1 _ hRB ⟨36, by decide⟩ ⟨1, by decide⟩ _ rfl _ hw_v1811_5 _ (k1_off97_form ..) _ hc16
      have s_B1_37 : addf (AccMath.accVec (rowF fl tab (wL L).val (2 * t1.val + 1) (2 * k.val + 1)) (offF fl (wL L).val (2 * t1.val + 1) (2 * k.val + 1)) 1 37) (shapeCast S16 (pair1_lt.sl.v1861_5 d L tab k r g1 g2 hR hin h9) hc16) = AccMath.accVec (rowF fl tab (wL L).val (2 * t1.val + 1) (2 * k.val + 1)) (offF fl (wL L).val (2 * t1.val + 1) (2 * k.val + 1)) 1 38 :=
        acc_step d L fl tab (wL L).val (2 * t1.val + 1) (2 * k.val + 1) 1 _ hRB ⟨37, by decide⟩ ⟨1, by decide⟩ _ rfl _ hw_v1847_5 _ (k1_off98_form ..) _ hc16
      have s_B1_38 : addf (AccMath.accVec (rowF fl tab (wL L).val (2 * t1.val + 1) (2 * k.val + 1)) (offF fl (wL L).val (2 * t1.val + 1) (2 * k.val + 1)) 1 38) (shapeCast S16 (pair1_lt.sl.v1897_5 d L tab k r g1 g2 hR hin h9) hc16) = AccMath.accVec (rowF fl tab (wL L).val (2 * t1.val + 1) (2 * k.val + 1)) (offF fl (wL L).val (2 * t1.val + 1) (2 * k.val + 1)) 1 39 :=
        acc_step d L fl tab (wL L).val (2 * t1.val + 1) (2 * k.val + 1) 1 _ hRB ⟨38, by decide⟩ ⟨1, by decide⟩ _ rfl _ hw_v1883_5 _ (k1_off99_form ..) _ hc16
      have s_B1_39 : addf (AccMath.accVec (rowF fl tab (wL L).val (2 * t1.val + 1) (2 * k.val + 1)) (offF fl (wL L).val (2 * t1.val + 1) (2 * k.val + 1)) 1 39) (shapeCast S16 (pair1_lt.sl.v1933_5 d L tab k r g1 g2 hR hin h9) hc16) = AccMath.accVec (rowF fl tab (wL L).val (2 * t1.val + 1) (2 * k.val + 1)) (offF fl (wL L).val (2 * t1.val + 1) (2 * k.val + 1)) 1 40 :=
        acc_step d L fl tab (wL L).val (2 * t1.val + 1) (2 * k.val + 1) 1 _ hRB ⟨39, by decide⟩ ⟨1, by decide⟩ _ rfl _ hw_v1919_5 _ (k1_off100_form ..) _ hc16
      have s_B1_40 : addf (AccMath.accVec (rowF fl tab (wL L).val (2 * t1.val + 1) (2 * k.val + 1)) (offF fl (wL L).val (2 * t1.val + 1) (2 * k.val + 1)) 1 40) (shapeCast S16 (pair1_lt.sl.v1969_5 d L tab k r g1 g2 hR hin h9) hc16) = AccMath.accVec (rowF fl tab (wL L).val (2 * t1.val + 1) (2 * k.val + 1)) (offF fl (wL L).val (2 * t1.val + 1) (2 * k.val + 1)) 1 41 :=
        acc_step d L fl tab (wL L).val (2 * t1.val + 1) (2 * k.val + 1) 1 _ hRB ⟨40, by decide⟩ ⟨1, by decide⟩ _ rfl _ hw_v1955_5 _ (k1_off101_form ..) _ hc16
      have s_B1_41 : addf (AccMath.accVec (rowF fl tab (wL L).val (2 * t1.val + 1) (2 * k.val + 1)) (offF fl (wL L).val (2 * t1.val + 1) (2 * k.val + 1)) 1 41) (shapeCast S16 (pair1_lt.sl.v2005_5 d L tab k r g1 g2 hR hin h9) hc16) = AccMath.accVec (rowF fl tab (wL L).val (2 * t1.val + 1) (2 * k.val + 1)) (offF fl (wL L).val (2 * t1.val + 1) (2 * k.val + 1)) 1 42 :=
        acc_step d L fl tab (wL L).val (2 * t1.val + 1) (2 * k.val + 1) 1 _ hRB ⟨41, by decide⟩ ⟨1, by decide⟩ _ rfl _ hw_v1991_5 _ (k1_off102_form ..) _ hc16
      have s_B1_42 : addf (AccMath.accVec (rowF fl tab (wL L).val (2 * t1.val + 1) (2 * k.val + 1)) (offF fl (wL L).val (2 * t1.val + 1) (2 * k.val + 1)) 1 42) (shapeCast S16 (pair1_lt.sl.v2041_5 d L tab k r g1 g2 hR hin h9) hc16) = AccMath.accVec (rowF fl tab (wL L).val (2 * t1.val + 1) (2 * k.val + 1)) (offF fl (wL L).val (2 * t1.val + 1) (2 * k.val + 1)) 1 43 :=
        acc_step d L fl tab (wL L).val (2 * t1.val + 1) (2 * k.val + 1) 1 _ hRB ⟨42, by decide⟩ ⟨1, by decide⟩ _ rfl _ hw_v2027_5 _ (k1_off103_form ..) _ hc16
      have s_B1_43 : addf (AccMath.accVec (rowF fl tab (wL L).val (2 * t1.val + 1) (2 * k.val + 1)) (offF fl (wL L).val (2 * t1.val + 1) (2 * k.val + 1)) 1 43) (shapeCast S16 (pair1_lt.sl.v2077_5 d L tab k r g1 g2 hR hin h9) hc16) = AccMath.accVec (rowF fl tab (wL L).val (2 * t1.val + 1) (2 * k.val + 1)) (offF fl (wL L).val (2 * t1.val + 1) (2 * k.val + 1)) 1 44 :=
        acc_step d L fl tab (wL L).val (2 * t1.val + 1) (2 * k.val + 1) 1 _ hRB ⟨43, by decide⟩ ⟨1, by decide⟩ _ rfl _ hw_v2063_5 _ (k1_off104_form ..) _ hc16
      have s_B1_44 : addf (AccMath.accVec (rowF fl tab (wL L).val (2 * t1.val + 1) (2 * k.val + 1)) (offF fl (wL L).val (2 * t1.val + 1) (2 * k.val + 1)) 1 44) (shapeCast S16 (pair1_lt.sl.v2113_5 d L tab k r g1 g2 hR hin h9) hc16) = AccMath.accVec (rowF fl tab (wL L).val (2 * t1.val + 1) (2 * k.val + 1)) (offF fl (wL L).val (2 * t1.val + 1) (2 * k.val + 1)) 1 45 :=
        acc_step d L fl tab (wL L).val (2 * t1.val + 1) (2 * k.val + 1) 1 _ hRB ⟨44, by decide⟩ ⟨1, by decide⟩ _ rfl _ hw_v2099_5 _ (k1_off105_form ..) _ hc16
      have s_B1_45 : addf (AccMath.accVec (rowF fl tab (wL L).val (2 * t1.val + 1) (2 * k.val + 1)) (offF fl (wL L).val (2 * t1.val + 1) (2 * k.val + 1)) 1 45) (shapeCast S16 (pair1_lt.sl.v2149_5 d L tab k r g1 g2 hR hin h9) hc16) = AccMath.accVec (rowF fl tab (wL L).val (2 * t1.val + 1) (2 * k.val + 1)) (offF fl (wL L).val (2 * t1.val + 1) (2 * k.val + 1)) 1 46 :=
        acc_step d L fl tab (wL L).val (2 * t1.val + 1) (2 * k.val + 1) 1 _ hRB ⟨45, by decide⟩ ⟨1, by decide⟩ _ rfl _ hw_v2135_5 _ (k1_off106_form ..) _ hc16
      have s_B1_46 : addf (AccMath.accVec (rowF fl tab (wL L).val (2 * t1.val + 1) (2 * k.val + 1)) (offF fl (wL L).val (2 * t1.val + 1) (2 * k.val + 1)) 1 46) (shapeCast S16 (pair1_lt.sl.v2185_5 d L tab k r g1 g2 hR hin h9) hc16) = AccMath.accVec (rowF fl tab (wL L).val (2 * t1.val + 1) (2 * k.val + 1)) (offF fl (wL L).val (2 * t1.val + 1) (2 * k.val + 1)) 1 47 :=
        acc_step d L fl tab (wL L).val (2 * t1.val + 1) (2 * k.val + 1) 1 _ hRB ⟨46, by decide⟩ ⟨1, by decide⟩ _ rfl _ hw_v2171_5 _ (k1_off107_form ..) _ hc16
      have s_B1_47 : addf (AccMath.accVec (rowF fl tab (wL L).val (2 * t1.val + 1) (2 * k.val + 1)) (offF fl (wL L).val (2 * t1.val + 1) (2 * k.val + 1)) 1 47) (shapeCast S16 (pair1_lt.sl.v2221_5 d L tab k r g1 g2 hR hin h9) hc16) = AccMath.accVec (rowF fl tab (wL L).val (2 * t1.val + 1) (2 * k.val + 1)) (offF fl (wL L).val (2 * t1.val + 1) (2 * k.val + 1)) 1 48 :=
        acc_step d L fl tab (wL L).val (2 * t1.val + 1) (2 * k.val + 1) 1 _ hRB ⟨47, by decide⟩ ⟨1, by decide⟩ _ rfl _ hw_v2207_5 _ (k1_off108_form ..) _ hc16
      have s_B1_48 : addf (AccMath.accVec (rowF fl tab (wL L).val (2 * t1.val + 1) (2 * k.val + 1)) (offF fl (wL L).val (2 * t1.val + 1) (2 * k.val + 1)) 1 48) (shapeCast S16 (pair1_lt.sl.v1586 d L tab k r g1 g2 hR hin h9) hc16) = AccMath.accVec (rowF fl tab (wL L).val (2 * t1.val + 1) (2 * k.val + 1)) (offF fl (wL L).val (2 * t1.val + 1) (2 * k.val + 1)) 1 49 :=
        acc_step d L fl tab (wL L).val (2 * t1.val + 1) (2 * k.val + 1) 1 _ hRB ⟨48, by decide⟩ ⟨1, by decide⟩ _ rfl _ hw_v1572 _ (k1_off110_form ..) _ hc16
      have s_B1_49 : addf (AccMath.accVec (rowF fl tab (wL L).val (2 * t1.val + 1) (2 * k.val + 1)) (offF fl (wL L).val (2 * t1.val + 1) (2 * k.val + 1)) 1 49) (shapeCast S16 (pair1_lt.sl.v1620 d L tab k r g1 g2 hR hin h9) hc16) = AccMath.accVec (rowF fl tab (wL L).val (2 * t1.val + 1) (2 * k.val + 1)) (offF fl (wL L).val (2 * t1.val + 1) (2 * k.val + 1)) 1 50 :=
        acc_step d L fl tab (wL L).val (2 * t1.val + 1) (2 * k.val + 1) 1 _ hRB ⟨49, by decide⟩ ⟨1, by decide⟩ _ rfl _ hw_v1606 _ (k1_off111_form ..) _ hc16
      have hP_B1 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val + 1)) (offF fl (wL L).val (2 * t1.val + 1) (2 * k.val + 1)) 1 0) (shapeCast S16 (pair1_lt.sl.v1681_3 d L tab k r g1 g2 hR hin h9) hc16)) (shapeCast S16 (pair1_lt.sl.v1717_3 d L tab k r g1 g2 hR hin h9) hc16)) (shapeCast S16 (pair1_lt.sl.v1753_3 d L tab k r g1 g2 hR hin h9) hc16)) (shapeCast S16 (pair1_lt.sl.v1789_3 d L tab k r g1 g2 hR hin h9) hc16)) (shapeCast S16 (pair1_lt.sl.v1825_3 d L tab k r g1 g2 hR hin h9) hc16)) (shapeCast S16 (pair1_lt.sl.v1861_3 d L tab k r g1 g2 hR hin h9) hc16)) (shapeCast S16 (pair1_lt.sl.v1897_3 d L tab k r g1 g2 hR hin h9) hc16)) (shapeCast S16 (pair1_lt.sl.v1933_3 d L tab k r g1 g2 hR hin h9) hc16)) (shapeCast S16 (pair1_lt.sl.v1969_3 d L tab k r g1 g2 hR hin h9) hc16)) (shapeCast S16 (pair1_lt.sl.v2005_3 d L tab k r g1 g2 hR hin h9) hc16)) (shapeCast S16 (pair1_lt.sl.v2041_3 d L tab k r g1 g2 hR hin h9) hc16)) (shapeCast S16 (pair1_lt.sl.v2077_3 d L tab k r g1 g2 hR hin h9) hc16)) (shapeCast S16 (pair1_lt.sl.v2113_3 d L tab k r g1 g2 hR hin h9) hc16)) (shapeCast S16 (pair1_lt.sl.v2149_3 d L tab k r g1 g2 hR hin h9) hc16)) (shapeCast S16 (pair1_lt.sl.v2185_3 d L tab k r g1 g2 hR hin h9) hc16)) (shapeCast S16 (pair1_lt.sl.v2221_3 d L tab k r g1 g2 hR hin h9) hc16)) (shapeCast S16 (pair1_lt.sl.v1681_4 d L tab k r g1 g2 hR hin h9) hc16)) (shapeCast S16 (pair1_lt.sl.v1717_4 d L tab k r g1 g2 hR hin h9) hc16)) (shapeCast S16 (pair1_lt.sl.v1753_4 d L tab k r g1 g2 hR hin h9) hc16)) (shapeCast S16 (pair1_lt.sl.v1789_4 d L tab k r g1 g2 hR hin h9) hc16)) (shapeCast S16 (pair1_lt.sl.v1825_4 d L tab k r g1 g2 hR hin h9) hc16)) (shapeCast S16 (pair1_lt.sl.v1861_4 d L tab k r g1 g2 hR hin h9) hc16)) (shapeCast S16 (pair1_lt.sl.v1897_4 d L tab k r g1 g2 hR hin h9) hc16)) (shapeCast S16 (pair1_lt.sl.v1933_4 d L tab k r g1 g2 hR hin h9) hc16)) (shapeCast S16 (pair1_lt.sl.v1969_4 d L tab k r g1 g2 hR hin h9) hc16)) (shapeCast S16 (pair1_lt.sl.v2005_4 d L tab k r g1 g2 hR hin h9) hc16)) (shapeCast S16 (pair1_lt.sl.v2041_4 d L tab k r g1 g2 hR hin h9) hc16)) (shapeCast S16 (pair1_lt.sl.v2077_4 d L tab k r g1 g2 hR hin h9) hc16)) (shapeCast S16 (pair1_lt.sl.v2113_4 d L tab k r g1 g2 hR hin h9) hc16)) (shapeCast S16 (pair1_lt.sl.v2149_4 d L tab k r g1 g2 hR hin h9) hc16)) (shapeCast S16 (pair1_lt.sl.v2185_4 d L tab k r g1 g2 hR hin h9) hc16)) (shapeCast S16 (pair1_lt.sl.v2221_4 d L tab k r g1 g2 hR hin h9) hc16)) (shapeCast S16 (pair1_lt.sl.v1681_5 d L tab k r g1 g2 hR hin h9) hc16)) (shapeCast S16 (pair1_lt.sl.v1717_5 d L tab k r g1 g2 hR hin h9) hc16)) (shapeCast S16 (pair1_lt.sl.v1753_5 d L tab k r g1 g2 hR hin h9) hc16)) (shapeCast S16 (pair1_lt.sl.v1789_5 d L tab k r g1 g2 hR hin h9) hc16)) (shapeCast S16 (pair1_lt.sl.v1825_5 d L tab k r g1 g2 hR hin h9) hc16)) (shapeCast S16 (pair1_lt.sl.v1861_5 d L tab k r g1 g2 hR hin h9) hc16)) (shapeCast S16 (pair1_lt.sl.v1897_5 d L tab k r g1 g2 hR hin h9) hc16)) (shapeCast S16 (pair1_lt.sl.v1933_5 d L tab k r g1 g2 hR hin h9) hc16)) (shapeCast S16 (pair1_lt.sl.v1969_5 d L tab k r g1 g2 hR hin h9) hc16)) (shapeCast S16 (pair1_lt.sl.v2005_5 d L tab k r g1 g2 hR hin h9) hc16)) (shapeCast S16 (pair1_lt.sl.v2041_5 d L tab k r g1 g2 hR hin h9) hc16)) (shapeCast S16 (pair1_lt.sl.v2077_5 d L tab k r g1 g2 hR hin h9) hc16)) (shapeCast S16 (pair1_lt.sl.v2113_5 d L tab k r g1 g2 hR hin h9) hc16)) (shapeCast S16 (pair1_lt.sl.v2149_5 d L tab k r g1 g2 hR hin h9) hc16)) (shapeCast S16 (pair1_lt.sl.v2185_5 d L tab k r g1 g2 hR hin h9) hc16)) (shapeCast S16 (pair1_lt.sl.v2221_5 d L tab k r g1 g2 hR hin h9) hc16)) (shapeCast S16 (pair1_lt.sl.v1586 d L tab k r g1 g2 hR hin h9) hc16)) (shapeCast S16 (pair1_lt.sl.v1620 d L tab k r g1 g2 hR hin h9) hc16)) hc1 x = Spec.bagPartial fl tab (128 * (wL L).val + 16 * (2 * t1.val + 1) + (2 * k.val + 1)) (16 * 1 + (x 2).val) 50 := fun x => by
        rw [s_B1_0, s_B1_1, s_B1_2, s_B1_3, s_B1_4, s_B1_5, s_B1_6, s_B1_7, s_B1_8, s_B1_9, s_B1_10, s_B1_11, s_B1_12, s_B1_13, s_B1_14, s_B1_15, s_B1_16, s_B1_17, s_B1_18, s_B1_19, s_B1_20, s_B1_21, s_B1_22, s_B1_23, s_B1_24, s_B1_25, s_B1_26, s_B1_27, s_B1_28, s_B1_29, s_B1_30, s_B1_31, s_B1_32, s_B1_33, s_B1_34, s_B1_35, s_B1_36, s_B1_37, s_B1_38, s_B1_39, s_B1_40, s_B1_41, s_B1_42, s_B1_43, s_B1_44, s_B1_45, s_B1_46, s_B1_47, s_B1_48, s_B1_49]
        exact payload_ok fl tab (wL L).val (2 * t1.val + 1) (2 * k.val + 1) ⟨1, by decide⟩ hc1 x
      have s_B2_0 : addf (AccMath.accVec (rowF fl tab (wL L).val (2 * t1.val + 1) (2 * k.val + 1)) (offF fl (wL L).val (2 * t1.val + 1) (2 * k.val + 1)) 2 0) (shapeCast S16 (pair1_lt.sl.v1689_3 d L tab k r g1 g2 hR hin h9) hc16) = AccMath.accVec (rowF fl tab (wL L).val (2 * t1.val + 1) (2 * k.val + 1)) (offF fl (wL L).val (2 * t1.val + 1) (2 * k.val + 1)) 2 1 :=
        acc_step d L fl tab (wL L).val (2 * t1.val + 1) (2 * k.val + 1) 1 _ hRB ⟨0, by decide⟩ ⟨2, by decide⟩ _ rfl _ hw_v1667_3 _ (k1_off93_form ..) _ hc16
      have s_B2_1 : addf (AccMath.accVec (rowF fl tab (wL L).val (2 * t1.val + 1) (2 * k.val + 1)) (offF fl (wL L).val (2 * t1.val + 1) (2 * k.val + 1)) 2 1) (shapeCast S16 (pair1_lt.sl.v1725_3 d L tab k r g1 g2 hR hin h9) hc16) = AccMath.accVec (rowF fl tab (wL L).val (2 * t1.val + 1) (2 * k.val + 1)) (offF fl (wL L).val (2 * t1.val + 1) (2 * k.val + 1)) 2 2 :=
        acc_step d L fl tab (wL L).val (2 * t1.val + 1) (2 * k.val + 1) 1 _ hRB ⟨1, by decide⟩ ⟨2, by decide⟩ _ rfl _ hw_v1703_3 _ (k1_off94_form ..) _ hc16
      have s_B2_2 : addf (AccMath.accVec (rowF fl tab (wL L).val (2 * t1.val + 1) (2 * k.val + 1)) (offF fl (wL L).val (2 * t1.val + 1) (2 * k.val + 1)) 2 2) (shapeCast S16 (pair1_lt.sl.v1761_3 d L tab k r g1 g2 hR hin h9) hc16) = AccMath.accVec (rowF fl tab (wL L).val (2 * t1.val + 1) (2 * k.val + 1)) (offF fl (wL L).val (2 * t1.val + 1) (2 * k.val + 1)) 2 3 :=
        acc_step d L fl tab (wL L).val (2 * t1.val + 1) (2 * k.val + 1) 1 _ hRB ⟨2, by decide⟩ ⟨2, by decide⟩ _ rfl _ hw_v1739_3 _ (k1_off95_form ..) _ hc16
      have s_B2_3 : addf (AccMath.accVec (rowF fl tab (wL L).val (2 * t1.val + 1) (2 * k.val + 1)) (offF fl (wL L).val (2 * t1.val + 1) (2 * k.val + 1)) 2 3) (shapeCast S16 (pair1_lt.sl.v1797_3 d L tab k r g1 g2 hR hin h9) hc16) = AccMath.accVec (rowF fl tab (wL L).val (2 * t1.val + 1) (2 * k.val + 1)) (offF fl (wL L).val (2 * t1.val + 1) (2 * k.val + 1)) 2 4 :=
        acc_step d L fl tab (wL L).val (2 * t1.val + 1) (2 * k.val + 1) 1 _ hRB ⟨3, by decide⟩ ⟨2, by decide⟩ _ rfl _ hw_v1775_3 _ (k1_off96_form ..) _ hc16
      have s_B2_4 : addf (AccMath.accVec (rowF fl tab (wL L).val (2 * t1.val + 1) (2 * k.val + 1)) (offF fl (wL L).val (2 * t1.val + 1) (2 * k.val + 1)) 2 4) (shapeCast S16 (pair1_lt.sl.v1833_3 d L tab k r g1 g2 hR hin h9) hc16) = AccMath.accVec (rowF fl tab (wL L).val (2 * t1.val + 1) (2 * k.val + 1)) (offF fl (wL L).val (2 * t1.val + 1) (2 * k.val + 1)) 2 5 :=
        acc_step d L fl tab (wL L).val (2 * t1.val + 1) (2 * k.val + 1) 1 _ hRB ⟨4, by decide⟩ ⟨2, by decide⟩ _ rfl _ hw_v1811_3 _ (k1_off97_form ..) _ hc16
      have s_B2_5 : addf (AccMath.accVec (rowF fl tab (wL L).val (2 * t1.val + 1) (2 * k.val + 1)) (offF fl (wL L).val (2 * t1.val + 1) (2 * k.val + 1)) 2 5) (shapeCast S16 (pair1_lt.sl.v1869_3 d L tab k r g1 g2 hR hin h9) hc16) = AccMath.accVec (rowF fl tab (wL L).val (2 * t1.val + 1) (2 * k.val + 1)) (offF fl (wL L).val (2 * t1.val + 1) (2 * k.val + 1)) 2 6 :=
        acc_step d L fl tab (wL L).val (2 * t1.val + 1) (2 * k.val + 1) 1 _ hRB ⟨5, by decide⟩ ⟨2, by decide⟩ _ rfl _ hw_v1847_3 _ (k1_off98_form ..) _ hc16
      have s_B2_6 : addf (AccMath.accVec (rowF fl tab (wL L).val (2 * t1.val + 1) (2 * k.val + 1)) (offF fl (wL L).val (2 * t1.val + 1) (2 * k.val + 1)) 2 6) (shapeCast S16 (pair1_lt.sl.v1905_3 d L tab k r g1 g2 hR hin h9) hc16) = AccMath.accVec (rowF fl tab (wL L).val (2 * t1.val + 1) (2 * k.val + 1)) (offF fl (wL L).val (2 * t1.val + 1) (2 * k.val + 1)) 2 7 :=
        acc_step d L fl tab (wL L).val (2 * t1.val + 1) (2 * k.val + 1) 1 _ hRB ⟨6, by decide⟩ ⟨2, by decide⟩ _ rfl _ hw_v1883_3 _ (k1_off99_form ..) _ hc16
      have s_B2_7 : addf (AccMath.accVec (rowF fl tab (wL L).val (2 * t1.val + 1) (2 * k.val + 1)) (offF fl (wL L).val (2 * t1.val + 1) (2 * k.val + 1)) 2 7) (shapeCast S16 (pair1_lt.sl.v1941_3 d L tab k r g1 g2 hR hin h9) hc16) = AccMath.accVec (rowF fl tab (wL L).val (2 * t1.val + 1) (2 * k.val + 1)) (offF fl (wL L).val (2 * t1.val + 1) (2 * k.val + 1)) 2 8 :=
        acc_step d L fl tab (wL L).val (2 * t1.val + 1) (2 * k.val + 1) 1 _ hRB ⟨7, by decide⟩ ⟨2, by decide⟩ _ rfl _ hw_v1919_3 _ (k1_off100_form ..) _ hc16
      have s_B2_8 : addf (AccMath.accVec (rowF fl tab (wL L).val (2 * t1.val + 1) (2 * k.val + 1)) (offF fl (wL L).val (2 * t1.val + 1) (2 * k.val + 1)) 2 8) (shapeCast S16 (pair1_lt.sl.v1977_3 d L tab k r g1 g2 hR hin h9) hc16) = AccMath.accVec (rowF fl tab (wL L).val (2 * t1.val + 1) (2 * k.val + 1)) (offF fl (wL L).val (2 * t1.val + 1) (2 * k.val + 1)) 2 9 :=
        acc_step d L fl tab (wL L).val (2 * t1.val + 1) (2 * k.val + 1) 1 _ hRB ⟨8, by decide⟩ ⟨2, by decide⟩ _ rfl _ hw_v1955_3 _ (k1_off101_form ..) _ hc16
      have s_B2_9 : addf (AccMath.accVec (rowF fl tab (wL L).val (2 * t1.val + 1) (2 * k.val + 1)) (offF fl (wL L).val (2 * t1.val + 1) (2 * k.val + 1)) 2 9) (shapeCast S16 (pair1_lt.sl.v2013_3 d L tab k r g1 g2 hR hin h9) hc16) = AccMath.accVec (rowF fl tab (wL L).val (2 * t1.val + 1) (2 * k.val + 1)) (offF fl (wL L).val (2 * t1.val + 1) (2 * k.val + 1)) 2 10 :=
        acc_step d L fl tab (wL L).val (2 * t1.val + 1) (2 * k.val + 1) 1 _ hRB ⟨9, by decide⟩ ⟨2, by decide⟩ _ rfl _ hw_v1991_3 _ (k1_off102_form ..) _ hc16
      have s_B2_10 : addf (AccMath.accVec (rowF fl tab (wL L).val (2 * t1.val + 1) (2 * k.val + 1)) (offF fl (wL L).val (2 * t1.val + 1) (2 * k.val + 1)) 2 10) (shapeCast S16 (pair1_lt.sl.v2049_3 d L tab k r g1 g2 hR hin h9) hc16) = AccMath.accVec (rowF fl tab (wL L).val (2 * t1.val + 1) (2 * k.val + 1)) (offF fl (wL L).val (2 * t1.val + 1) (2 * k.val + 1)) 2 11 :=
        acc_step d L fl tab (wL L).val (2 * t1.val + 1) (2 * k.val + 1) 1 _ hRB ⟨10, by decide⟩ ⟨2, by decide⟩ _ rfl _ hw_v2027_3 _ (k1_off103_form ..) _ hc16
      have s_B2_11 : addf (AccMath.accVec (rowF fl tab (wL L).val (2 * t1.val + 1) (2 * k.val + 1)) (offF fl (wL L).val (2 * t1.val + 1) (2 * k.val + 1)) 2 11) (shapeCast S16 (pair1_lt.sl.v2085_3 d L tab k r g1 g2 hR hin h9) hc16) = AccMath.accVec (rowF fl tab (wL L).val (2 * t1.val + 1) (2 * k.val + 1)) (offF fl (wL L).val (2 * t1.val + 1) (2 * k.val + 1)) 2 12 :=
        acc_step d L fl tab (wL L).val (2 * t1.val + 1) (2 * k.val + 1) 1 _ hRB ⟨11, by decide⟩ ⟨2, by decide⟩ _ rfl _ hw_v2063_3 _ (k1_off104_form ..) _ hc16
      have s_B2_12 : addf (AccMath.accVec (rowF fl tab (wL L).val (2 * t1.val + 1) (2 * k.val + 1)) (offF fl (wL L).val (2 * t1.val + 1) (2 * k.val + 1)) 2 12) (shapeCast S16 (pair1_lt.sl.v2121_3 d L tab k r g1 g2 hR hin h9) hc16) = AccMath.accVec (rowF fl tab (wL L).val (2 * t1.val + 1) (2 * k.val + 1)) (offF fl (wL L).val (2 * t1.val + 1) (2 * k.val + 1)) 2 13 :=
        acc_step d L fl tab (wL L).val (2 * t1.val + 1) (2 * k.val + 1) 1 _ hRB ⟨12, by decide⟩ ⟨2, by decide⟩ _ rfl _ hw_v2099_3 _ (k1_off105_form ..) _ hc16
      have s_B2_13 : addf (AccMath.accVec (rowF fl tab (wL L).val (2 * t1.val + 1) (2 * k.val + 1)) (offF fl (wL L).val (2 * t1.val + 1) (2 * k.val + 1)) 2 13) (shapeCast S16 (pair1_lt.sl.v2157_3 d L tab k r g1 g2 hR hin h9) hc16) = AccMath.accVec (rowF fl tab (wL L).val (2 * t1.val + 1) (2 * k.val + 1)) (offF fl (wL L).val (2 * t1.val + 1) (2 * k.val + 1)) 2 14 :=
        acc_step d L fl tab (wL L).val (2 * t1.val + 1) (2 * k.val + 1) 1 _ hRB ⟨13, by decide⟩ ⟨2, by decide⟩ _ rfl _ hw_v2135_3 _ (k1_off106_form ..) _ hc16
      have s_B2_14 : addf (AccMath.accVec (rowF fl tab (wL L).val (2 * t1.val + 1) (2 * k.val + 1)) (offF fl (wL L).val (2 * t1.val + 1) (2 * k.val + 1)) 2 14) (shapeCast S16 (pair1_lt.sl.v2193_3 d L tab k r g1 g2 hR hin h9) hc16) = AccMath.accVec (rowF fl tab (wL L).val (2 * t1.val + 1) (2 * k.val + 1)) (offF fl (wL L).val (2 * t1.val + 1) (2 * k.val + 1)) 2 15 :=
        acc_step d L fl tab (wL L).val (2 * t1.val + 1) (2 * k.val + 1) 1 _ hRB ⟨14, by decide⟩ ⟨2, by decide⟩ _ rfl _ hw_v2171_3 _ (k1_off107_form ..) _ hc16
      have s_B2_15 : addf (AccMath.accVec (rowF fl tab (wL L).val (2 * t1.val + 1) (2 * k.val + 1)) (offF fl (wL L).val (2 * t1.val + 1) (2 * k.val + 1)) 2 15) (shapeCast S16 (pair1_lt.sl.v2229_3 d L tab k r g1 g2 hR hin h9) hc16) = AccMath.accVec (rowF fl tab (wL L).val (2 * t1.val + 1) (2 * k.val + 1)) (offF fl (wL L).val (2 * t1.val + 1) (2 * k.val + 1)) 2 16 :=
        acc_step d L fl tab (wL L).val (2 * t1.val + 1) (2 * k.val + 1) 1 _ hRB ⟨15, by decide⟩ ⟨2, by decide⟩ _ rfl _ hw_v2207_3 _ (k1_off108_form ..) _ hc16
      have s_B2_16 : addf (AccMath.accVec (rowF fl tab (wL L).val (2 * t1.val + 1) (2 * k.val + 1)) (offF fl (wL L).val (2 * t1.val + 1) (2 * k.val + 1)) 2 16) (shapeCast S16 (pair1_lt.sl.v1689_4 d L tab k r g1 g2 hR hin h9) hc16) = AccMath.accVec (rowF fl tab (wL L).val (2 * t1.val + 1) (2 * k.val + 1)) (offF fl (wL L).val (2 * t1.val + 1) (2 * k.val + 1)) 2 17 :=
        acc_step d L fl tab (wL L).val (2 * t1.val + 1) (2 * k.val + 1) 1 _ hRB ⟨16, by decide⟩ ⟨2, by decide⟩ _ rfl _ hw_v1667_4 _ (k1_off93_form ..) _ hc16
      have s_B2_17 : addf (AccMath.accVec (rowF fl tab (wL L).val (2 * t1.val + 1) (2 * k.val + 1)) (offF fl (wL L).val (2 * t1.val + 1) (2 * k.val + 1)) 2 17) (shapeCast S16 (pair1_lt.sl.v1725_4 d L tab k r g1 g2 hR hin h9) hc16) = AccMath.accVec (rowF fl tab (wL L).val (2 * t1.val + 1) (2 * k.val + 1)) (offF fl (wL L).val (2 * t1.val + 1) (2 * k.val + 1)) 2 18 :=
        acc_step d L fl tab (wL L).val (2 * t1.val + 1) (2 * k.val + 1) 1 _ hRB ⟨17, by decide⟩ ⟨2, by decide⟩ _ rfl _ hw_v1703_4 _ (k1_off94_form ..) _ hc16
      have s_B2_18 : addf (AccMath.accVec (rowF fl tab (wL L).val (2 * t1.val + 1) (2 * k.val + 1)) (offF fl (wL L).val (2 * t1.val + 1) (2 * k.val + 1)) 2 18) (shapeCast S16 (pair1_lt.sl.v1761_4 d L tab k r g1 g2 hR hin h9) hc16) = AccMath.accVec (rowF fl tab (wL L).val (2 * t1.val + 1) (2 * k.val + 1)) (offF fl (wL L).val (2 * t1.val + 1) (2 * k.val + 1)) 2 19 :=
        acc_step d L fl tab (wL L).val (2 * t1.val + 1) (2 * k.val + 1) 1 _ hRB ⟨18, by decide⟩ ⟨2, by decide⟩ _ rfl _ hw_v1739_4 _ (k1_off95_form ..) _ hc16
      have s_B2_19 : addf (AccMath.accVec (rowF fl tab (wL L).val (2 * t1.val + 1) (2 * k.val + 1)) (offF fl (wL L).val (2 * t1.val + 1) (2 * k.val + 1)) 2 19) (shapeCast S16 (pair1_lt.sl.v1797_4 d L tab k r g1 g2 hR hin h9) hc16) = AccMath.accVec (rowF fl tab (wL L).val (2 * t1.val + 1) (2 * k.val + 1)) (offF fl (wL L).val (2 * t1.val + 1) (2 * k.val + 1)) 2 20 :=
        acc_step d L fl tab (wL L).val (2 * t1.val + 1) (2 * k.val + 1) 1 _ hRB ⟨19, by decide⟩ ⟨2, by decide⟩ _ rfl _ hw_v1775_4 _ (k1_off96_form ..) _ hc16
      have s_B2_20 : addf (AccMath.accVec (rowF fl tab (wL L).val (2 * t1.val + 1) (2 * k.val + 1)) (offF fl (wL L).val (2 * t1.val + 1) (2 * k.val + 1)) 2 20) (shapeCast S16 (pair1_lt.sl.v1833_4 d L tab k r g1 g2 hR hin h9) hc16) = AccMath.accVec (rowF fl tab (wL L).val (2 * t1.val + 1) (2 * k.val + 1)) (offF fl (wL L).val (2 * t1.val + 1) (2 * k.val + 1)) 2 21 :=
        acc_step d L fl tab (wL L).val (2 * t1.val + 1) (2 * k.val + 1) 1 _ hRB ⟨20, by decide⟩ ⟨2, by decide⟩ _ rfl _ hw_v1811_4 _ (k1_off97_form ..) _ hc16
      have s_B2_21 : addf (AccMath.accVec (rowF fl tab (wL L).val (2 * t1.val + 1) (2 * k.val + 1)) (offF fl (wL L).val (2 * t1.val + 1) (2 * k.val + 1)) 2 21) (shapeCast S16 (pair1_lt.sl.v1869_4 d L tab k r g1 g2 hR hin h9) hc16) = AccMath.accVec (rowF fl tab (wL L).val (2 * t1.val + 1) (2 * k.val + 1)) (offF fl (wL L).val (2 * t1.val + 1) (2 * k.val + 1)) 2 22 :=
        acc_step d L fl tab (wL L).val (2 * t1.val + 1) (2 * k.val + 1) 1 _ hRB ⟨21, by decide⟩ ⟨2, by decide⟩ _ rfl _ hw_v1847_4 _ (k1_off98_form ..) _ hc16
      have s_B2_22 : addf (AccMath.accVec (rowF fl tab (wL L).val (2 * t1.val + 1) (2 * k.val + 1)) (offF fl (wL L).val (2 * t1.val + 1) (2 * k.val + 1)) 2 22) (shapeCast S16 (pair1_lt.sl.v1905_4 d L tab k r g1 g2 hR hin h9) hc16) = AccMath.accVec (rowF fl tab (wL L).val (2 * t1.val + 1) (2 * k.val + 1)) (offF fl (wL L).val (2 * t1.val + 1) (2 * k.val + 1)) 2 23 :=
        acc_step d L fl tab (wL L).val (2 * t1.val + 1) (2 * k.val + 1) 1 _ hRB ⟨22, by decide⟩ ⟨2, by decide⟩ _ rfl _ hw_v1883_4 _ (k1_off99_form ..) _ hc16
      have s_B2_23 : addf (AccMath.accVec (rowF fl tab (wL L).val (2 * t1.val + 1) (2 * k.val + 1)) (offF fl (wL L).val (2 * t1.val + 1) (2 * k.val + 1)) 2 23) (shapeCast S16 (pair1_lt.sl.v1941_4 d L tab k r g1 g2 hR hin h9) hc16) = AccMath.accVec (rowF fl tab (wL L).val (2 * t1.val + 1) (2 * k.val + 1)) (offF fl (wL L).val (2 * t1.val + 1) (2 * k.val + 1)) 2 24 :=
        acc_step d L fl tab (wL L).val (2 * t1.val + 1) (2 * k.val + 1) 1 _ hRB ⟨23, by decide⟩ ⟨2, by decide⟩ _ rfl _ hw_v1919_4 _ (k1_off100_form ..) _ hc16
      have s_B2_24 : addf (AccMath.accVec (rowF fl tab (wL L).val (2 * t1.val + 1) (2 * k.val + 1)) (offF fl (wL L).val (2 * t1.val + 1) (2 * k.val + 1)) 2 24) (shapeCast S16 (pair1_lt.sl.v1977_4 d L tab k r g1 g2 hR hin h9) hc16) = AccMath.accVec (rowF fl tab (wL L).val (2 * t1.val + 1) (2 * k.val + 1)) (offF fl (wL L).val (2 * t1.val + 1) (2 * k.val + 1)) 2 25 :=
        acc_step d L fl tab (wL L).val (2 * t1.val + 1) (2 * k.val + 1) 1 _ hRB ⟨24, by decide⟩ ⟨2, by decide⟩ _ rfl _ hw_v1955_4 _ (k1_off101_form ..) _ hc16
      have s_B2_25 : addf (AccMath.accVec (rowF fl tab (wL L).val (2 * t1.val + 1) (2 * k.val + 1)) (offF fl (wL L).val (2 * t1.val + 1) (2 * k.val + 1)) 2 25) (shapeCast S16 (pair1_lt.sl.v2013_4 d L tab k r g1 g2 hR hin h9) hc16) = AccMath.accVec (rowF fl tab (wL L).val (2 * t1.val + 1) (2 * k.val + 1)) (offF fl (wL L).val (2 * t1.val + 1) (2 * k.val + 1)) 2 26 :=
        acc_step d L fl tab (wL L).val (2 * t1.val + 1) (2 * k.val + 1) 1 _ hRB ⟨25, by decide⟩ ⟨2, by decide⟩ _ rfl _ hw_v1991_4 _ (k1_off102_form ..) _ hc16
      have s_B2_26 : addf (AccMath.accVec (rowF fl tab (wL L).val (2 * t1.val + 1) (2 * k.val + 1)) (offF fl (wL L).val (2 * t1.val + 1) (2 * k.val + 1)) 2 26) (shapeCast S16 (pair1_lt.sl.v2049_4 d L tab k r g1 g2 hR hin h9) hc16) = AccMath.accVec (rowF fl tab (wL L).val (2 * t1.val + 1) (2 * k.val + 1)) (offF fl (wL L).val (2 * t1.val + 1) (2 * k.val + 1)) 2 27 :=
        acc_step d L fl tab (wL L).val (2 * t1.val + 1) (2 * k.val + 1) 1 _ hRB ⟨26, by decide⟩ ⟨2, by decide⟩ _ rfl _ hw_v2027_4 _ (k1_off103_form ..) _ hc16
      have s_B2_27 : addf (AccMath.accVec (rowF fl tab (wL L).val (2 * t1.val + 1) (2 * k.val + 1)) (offF fl (wL L).val (2 * t1.val + 1) (2 * k.val + 1)) 2 27) (shapeCast S16 (pair1_lt.sl.v2085_4 d L tab k r g1 g2 hR hin h9) hc16) = AccMath.accVec (rowF fl tab (wL L).val (2 * t1.val + 1) (2 * k.val + 1)) (offF fl (wL L).val (2 * t1.val + 1) (2 * k.val + 1)) 2 28 :=
        acc_step d L fl tab (wL L).val (2 * t1.val + 1) (2 * k.val + 1) 1 _ hRB ⟨27, by decide⟩ ⟨2, by decide⟩ _ rfl _ hw_v2063_4 _ (k1_off104_form ..) _ hc16
      have s_B2_28 : addf (AccMath.accVec (rowF fl tab (wL L).val (2 * t1.val + 1) (2 * k.val + 1)) (offF fl (wL L).val (2 * t1.val + 1) (2 * k.val + 1)) 2 28) (shapeCast S16 (pair1_lt.sl.v2121_4 d L tab k r g1 g2 hR hin h9) hc16) = AccMath.accVec (rowF fl tab (wL L).val (2 * t1.val + 1) (2 * k.val + 1)) (offF fl (wL L).val (2 * t1.val + 1) (2 * k.val + 1)) 2 29 :=
        acc_step d L fl tab (wL L).val (2 * t1.val + 1) (2 * k.val + 1) 1 _ hRB ⟨28, by decide⟩ ⟨2, by decide⟩ _ rfl _ hw_v2099_4 _ (k1_off105_form ..) _ hc16
      have s_B2_29 : addf (AccMath.accVec (rowF fl tab (wL L).val (2 * t1.val + 1) (2 * k.val + 1)) (offF fl (wL L).val (2 * t1.val + 1) (2 * k.val + 1)) 2 29) (shapeCast S16 (pair1_lt.sl.v2157_4 d L tab k r g1 g2 hR hin h9) hc16) = AccMath.accVec (rowF fl tab (wL L).val (2 * t1.val + 1) (2 * k.val + 1)) (offF fl (wL L).val (2 * t1.val + 1) (2 * k.val + 1)) 2 30 :=
        acc_step d L fl tab (wL L).val (2 * t1.val + 1) (2 * k.val + 1) 1 _ hRB ⟨29, by decide⟩ ⟨2, by decide⟩ _ rfl _ hw_v2135_4 _ (k1_off106_form ..) _ hc16
      have s_B2_30 : addf (AccMath.accVec (rowF fl tab (wL L).val (2 * t1.val + 1) (2 * k.val + 1)) (offF fl (wL L).val (2 * t1.val + 1) (2 * k.val + 1)) 2 30) (shapeCast S16 (pair1_lt.sl.v2193_4 d L tab k r g1 g2 hR hin h9) hc16) = AccMath.accVec (rowF fl tab (wL L).val (2 * t1.val + 1) (2 * k.val + 1)) (offF fl (wL L).val (2 * t1.val + 1) (2 * k.val + 1)) 2 31 :=
        acc_step d L fl tab (wL L).val (2 * t1.val + 1) (2 * k.val + 1) 1 _ hRB ⟨30, by decide⟩ ⟨2, by decide⟩ _ rfl _ hw_v2171_4 _ (k1_off107_form ..) _ hc16
      have s_B2_31 : addf (AccMath.accVec (rowF fl tab (wL L).val (2 * t1.val + 1) (2 * k.val + 1)) (offF fl (wL L).val (2 * t1.val + 1) (2 * k.val + 1)) 2 31) (shapeCast S16 (pair1_lt.sl.v2229_4 d L tab k r g1 g2 hR hin h9) hc16) = AccMath.accVec (rowF fl tab (wL L).val (2 * t1.val + 1) (2 * k.val + 1)) (offF fl (wL L).val (2 * t1.val + 1) (2 * k.val + 1)) 2 32 :=
        acc_step d L fl tab (wL L).val (2 * t1.val + 1) (2 * k.val + 1) 1 _ hRB ⟨31, by decide⟩ ⟨2, by decide⟩ _ rfl _ hw_v2207_4 _ (k1_off108_form ..) _ hc16
      have s_B2_32 : addf (AccMath.accVec (rowF fl tab (wL L).val (2 * t1.val + 1) (2 * k.val + 1)) (offF fl (wL L).val (2 * t1.val + 1) (2 * k.val + 1)) 2 32) (shapeCast S16 (pair1_lt.sl.v1689_5 d L tab k r g1 g2 hR hin h9) hc16) = AccMath.accVec (rowF fl tab (wL L).val (2 * t1.val + 1) (2 * k.val + 1)) (offF fl (wL L).val (2 * t1.val + 1) (2 * k.val + 1)) 2 33 :=
        acc_step d L fl tab (wL L).val (2 * t1.val + 1) (2 * k.val + 1) 1 _ hRB ⟨32, by decide⟩ ⟨2, by decide⟩ _ rfl _ hw_v1667_5 _ (k1_off93_form ..) _ hc16
      have s_B2_33 : addf (AccMath.accVec (rowF fl tab (wL L).val (2 * t1.val + 1) (2 * k.val + 1)) (offF fl (wL L).val (2 * t1.val + 1) (2 * k.val + 1)) 2 33) (shapeCast S16 (pair1_lt.sl.v1725_5 d L tab k r g1 g2 hR hin h9) hc16) = AccMath.accVec (rowF fl tab (wL L).val (2 * t1.val + 1) (2 * k.val + 1)) (offF fl (wL L).val (2 * t1.val + 1) (2 * k.val + 1)) 2 34 :=
        acc_step d L fl tab (wL L).val (2 * t1.val + 1) (2 * k.val + 1) 1 _ hRB ⟨33, by decide⟩ ⟨2, by decide⟩ _ rfl _ hw_v1703_5 _ (k1_off94_form ..) _ hc16
      have s_B2_34 : addf (AccMath.accVec (rowF fl tab (wL L).val (2 * t1.val + 1) (2 * k.val + 1)) (offF fl (wL L).val (2 * t1.val + 1) (2 * k.val + 1)) 2 34) (shapeCast S16 (pair1_lt.sl.v1761_5 d L tab k r g1 g2 hR hin h9) hc16) = AccMath.accVec (rowF fl tab (wL L).val (2 * t1.val + 1) (2 * k.val + 1)) (offF fl (wL L).val (2 * t1.val + 1) (2 * k.val + 1)) 2 35 :=
        acc_step d L fl tab (wL L).val (2 * t1.val + 1) (2 * k.val + 1) 1 _ hRB ⟨34, by decide⟩ ⟨2, by decide⟩ _ rfl _ hw_v1739_5 _ (k1_off95_form ..) _ hc16
      have s_B2_35 : addf (AccMath.accVec (rowF fl tab (wL L).val (2 * t1.val + 1) (2 * k.val + 1)) (offF fl (wL L).val (2 * t1.val + 1) (2 * k.val + 1)) 2 35) (shapeCast S16 (pair1_lt.sl.v1797_5 d L tab k r g1 g2 hR hin h9) hc16) = AccMath.accVec (rowF fl tab (wL L).val (2 * t1.val + 1) (2 * k.val + 1)) (offF fl (wL L).val (2 * t1.val + 1) (2 * k.val + 1)) 2 36 :=
        acc_step d L fl tab (wL L).val (2 * t1.val + 1) (2 * k.val + 1) 1 _ hRB ⟨35, by decide⟩ ⟨2, by decide⟩ _ rfl _ hw_v1775_5 _ (k1_off96_form ..) _ hc16
      have s_B2_36 : addf (AccMath.accVec (rowF fl tab (wL L).val (2 * t1.val + 1) (2 * k.val + 1)) (offF fl (wL L).val (2 * t1.val + 1) (2 * k.val + 1)) 2 36) (shapeCast S16 (pair1_lt.sl.v1833_5 d L tab k r g1 g2 hR hin h9) hc16) = AccMath.accVec (rowF fl tab (wL L).val (2 * t1.val + 1) (2 * k.val + 1)) (offF fl (wL L).val (2 * t1.val + 1) (2 * k.val + 1)) 2 37 :=
        acc_step d L fl tab (wL L).val (2 * t1.val + 1) (2 * k.val + 1) 1 _ hRB ⟨36, by decide⟩ ⟨2, by decide⟩ _ rfl _ hw_v1811_5 _ (k1_off97_form ..) _ hc16
      have s_B2_37 : addf (AccMath.accVec (rowF fl tab (wL L).val (2 * t1.val + 1) (2 * k.val + 1)) (offF fl (wL L).val (2 * t1.val + 1) (2 * k.val + 1)) 2 37) (shapeCast S16 (pair1_lt.sl.v1869_5 d L tab k r g1 g2 hR hin h9) hc16) = AccMath.accVec (rowF fl tab (wL L).val (2 * t1.val + 1) (2 * k.val + 1)) (offF fl (wL L).val (2 * t1.val + 1) (2 * k.val + 1)) 2 38 :=
        acc_step d L fl tab (wL L).val (2 * t1.val + 1) (2 * k.val + 1) 1 _ hRB ⟨37, by decide⟩ ⟨2, by decide⟩ _ rfl _ hw_v1847_5 _ (k1_off98_form ..) _ hc16
      have s_B2_38 : addf (AccMath.accVec (rowF fl tab (wL L).val (2 * t1.val + 1) (2 * k.val + 1)) (offF fl (wL L).val (2 * t1.val + 1) (2 * k.val + 1)) 2 38) (shapeCast S16 (pair1_lt.sl.v1905_5 d L tab k r g1 g2 hR hin h9) hc16) = AccMath.accVec (rowF fl tab (wL L).val (2 * t1.val + 1) (2 * k.val + 1)) (offF fl (wL L).val (2 * t1.val + 1) (2 * k.val + 1)) 2 39 :=
        acc_step d L fl tab (wL L).val (2 * t1.val + 1) (2 * k.val + 1) 1 _ hRB ⟨38, by decide⟩ ⟨2, by decide⟩ _ rfl _ hw_v1883_5 _ (k1_off99_form ..) _ hc16
      have s_B2_39 : addf (AccMath.accVec (rowF fl tab (wL L).val (2 * t1.val + 1) (2 * k.val + 1)) (offF fl (wL L).val (2 * t1.val + 1) (2 * k.val + 1)) 2 39) (shapeCast S16 (pair1_lt.sl.v1941_5 d L tab k r g1 g2 hR hin h9) hc16) = AccMath.accVec (rowF fl tab (wL L).val (2 * t1.val + 1) (2 * k.val + 1)) (offF fl (wL L).val (2 * t1.val + 1) (2 * k.val + 1)) 2 40 :=
        acc_step d L fl tab (wL L).val (2 * t1.val + 1) (2 * k.val + 1) 1 _ hRB ⟨39, by decide⟩ ⟨2, by decide⟩ _ rfl _ hw_v1919_5 _ (k1_off100_form ..) _ hc16
      have s_B2_40 : addf (AccMath.accVec (rowF fl tab (wL L).val (2 * t1.val + 1) (2 * k.val + 1)) (offF fl (wL L).val (2 * t1.val + 1) (2 * k.val + 1)) 2 40) (shapeCast S16 (pair1_lt.sl.v1977_5 d L tab k r g1 g2 hR hin h9) hc16) = AccMath.accVec (rowF fl tab (wL L).val (2 * t1.val + 1) (2 * k.val + 1)) (offF fl (wL L).val (2 * t1.val + 1) (2 * k.val + 1)) 2 41 :=
        acc_step d L fl tab (wL L).val (2 * t1.val + 1) (2 * k.val + 1) 1 _ hRB ⟨40, by decide⟩ ⟨2, by decide⟩ _ rfl _ hw_v1955_5 _ (k1_off101_form ..) _ hc16
      have s_B2_41 : addf (AccMath.accVec (rowF fl tab (wL L).val (2 * t1.val + 1) (2 * k.val + 1)) (offF fl (wL L).val (2 * t1.val + 1) (2 * k.val + 1)) 2 41) (shapeCast S16 (pair1_lt.sl.v2013_5 d L tab k r g1 g2 hR hin h9) hc16) = AccMath.accVec (rowF fl tab (wL L).val (2 * t1.val + 1) (2 * k.val + 1)) (offF fl (wL L).val (2 * t1.val + 1) (2 * k.val + 1)) 2 42 :=
        acc_step d L fl tab (wL L).val (2 * t1.val + 1) (2 * k.val + 1) 1 _ hRB ⟨41, by decide⟩ ⟨2, by decide⟩ _ rfl _ hw_v1991_5 _ (k1_off102_form ..) _ hc16
      have s_B2_42 : addf (AccMath.accVec (rowF fl tab (wL L).val (2 * t1.val + 1) (2 * k.val + 1)) (offF fl (wL L).val (2 * t1.val + 1) (2 * k.val + 1)) 2 42) (shapeCast S16 (pair1_lt.sl.v2049_5 d L tab k r g1 g2 hR hin h9) hc16) = AccMath.accVec (rowF fl tab (wL L).val (2 * t1.val + 1) (2 * k.val + 1)) (offF fl (wL L).val (2 * t1.val + 1) (2 * k.val + 1)) 2 43 :=
        acc_step d L fl tab (wL L).val (2 * t1.val + 1) (2 * k.val + 1) 1 _ hRB ⟨42, by decide⟩ ⟨2, by decide⟩ _ rfl _ hw_v2027_5 _ (k1_off103_form ..) _ hc16
      have s_B2_43 : addf (AccMath.accVec (rowF fl tab (wL L).val (2 * t1.val + 1) (2 * k.val + 1)) (offF fl (wL L).val (2 * t1.val + 1) (2 * k.val + 1)) 2 43) (shapeCast S16 (pair1_lt.sl.v2085_5 d L tab k r g1 g2 hR hin h9) hc16) = AccMath.accVec (rowF fl tab (wL L).val (2 * t1.val + 1) (2 * k.val + 1)) (offF fl (wL L).val (2 * t1.val + 1) (2 * k.val + 1)) 2 44 :=
        acc_step d L fl tab (wL L).val (2 * t1.val + 1) (2 * k.val + 1) 1 _ hRB ⟨43, by decide⟩ ⟨2, by decide⟩ _ rfl _ hw_v2063_5 _ (k1_off104_form ..) _ hc16
      have s_B2_44 : addf (AccMath.accVec (rowF fl tab (wL L).val (2 * t1.val + 1) (2 * k.val + 1)) (offF fl (wL L).val (2 * t1.val + 1) (2 * k.val + 1)) 2 44) (shapeCast S16 (pair1_lt.sl.v2121_5 d L tab k r g1 g2 hR hin h9) hc16) = AccMath.accVec (rowF fl tab (wL L).val (2 * t1.val + 1) (2 * k.val + 1)) (offF fl (wL L).val (2 * t1.val + 1) (2 * k.val + 1)) 2 45 :=
        acc_step d L fl tab (wL L).val (2 * t1.val + 1) (2 * k.val + 1) 1 _ hRB ⟨44, by decide⟩ ⟨2, by decide⟩ _ rfl _ hw_v2099_5 _ (k1_off105_form ..) _ hc16
      have s_B2_45 : addf (AccMath.accVec (rowF fl tab (wL L).val (2 * t1.val + 1) (2 * k.val + 1)) (offF fl (wL L).val (2 * t1.val + 1) (2 * k.val + 1)) 2 45) (shapeCast S16 (pair1_lt.sl.v2157_5 d L tab k r g1 g2 hR hin h9) hc16) = AccMath.accVec (rowF fl tab (wL L).val (2 * t1.val + 1) (2 * k.val + 1)) (offF fl (wL L).val (2 * t1.val + 1) (2 * k.val + 1)) 2 46 :=
        acc_step d L fl tab (wL L).val (2 * t1.val + 1) (2 * k.val + 1) 1 _ hRB ⟨45, by decide⟩ ⟨2, by decide⟩ _ rfl _ hw_v2135_5 _ (k1_off106_form ..) _ hc16
      have s_B2_46 : addf (AccMath.accVec (rowF fl tab (wL L).val (2 * t1.val + 1) (2 * k.val + 1)) (offF fl (wL L).val (2 * t1.val + 1) (2 * k.val + 1)) 2 46) (shapeCast S16 (pair1_lt.sl.v2193_5 d L tab k r g1 g2 hR hin h9) hc16) = AccMath.accVec (rowF fl tab (wL L).val (2 * t1.val + 1) (2 * k.val + 1)) (offF fl (wL L).val (2 * t1.val + 1) (2 * k.val + 1)) 2 47 :=
        acc_step d L fl tab (wL L).val (2 * t1.val + 1) (2 * k.val + 1) 1 _ hRB ⟨46, by decide⟩ ⟨2, by decide⟩ _ rfl _ hw_v2171_5 _ (k1_off107_form ..) _ hc16
      have s_B2_47 : addf (AccMath.accVec (rowF fl tab (wL L).val (2 * t1.val + 1) (2 * k.val + 1)) (offF fl (wL L).val (2 * t1.val + 1) (2 * k.val + 1)) 2 47) (shapeCast S16 (pair1_lt.sl.v2229_5 d L tab k r g1 g2 hR hin h9) hc16) = AccMath.accVec (rowF fl tab (wL L).val (2 * t1.val + 1) (2 * k.val + 1)) (offF fl (wL L).val (2 * t1.val + 1) (2 * k.val + 1)) 2 48 :=
        acc_step d L fl tab (wL L).val (2 * t1.val + 1) (2 * k.val + 1) 1 _ hRB ⟨47, by decide⟩ ⟨2, by decide⟩ _ rfl _ hw_v2207_5 _ (k1_off108_form ..) _ hc16
      have s_B2_48 : addf (AccMath.accVec (rowF fl tab (wL L).val (2 * t1.val + 1) (2 * k.val + 1)) (offF fl (wL L).val (2 * t1.val + 1) (2 * k.val + 1)) 2 48) (shapeCast S16 (pair1_lt.sl.v1594 d L tab k r g1 g2 hR hin h9) hc16) = AccMath.accVec (rowF fl tab (wL L).val (2 * t1.val + 1) (2 * k.val + 1)) (offF fl (wL L).val (2 * t1.val + 1) (2 * k.val + 1)) 2 49 :=
        acc_step d L fl tab (wL L).val (2 * t1.val + 1) (2 * k.val + 1) 1 _ hRB ⟨48, by decide⟩ ⟨2, by decide⟩ _ rfl _ hw_v1572 _ (k1_off110_form ..) _ hc16
      have s_B2_49 : addf (AccMath.accVec (rowF fl tab (wL L).val (2 * t1.val + 1) (2 * k.val + 1)) (offF fl (wL L).val (2 * t1.val + 1) (2 * k.val + 1)) 2 49) (shapeCast S16 (pair1_lt.sl.v1628 d L tab k r g1 g2 hR hin h9) hc16) = AccMath.accVec (rowF fl tab (wL L).val (2 * t1.val + 1) (2 * k.val + 1)) (offF fl (wL L).val (2 * t1.val + 1) (2 * k.val + 1)) 2 50 :=
        acc_step d L fl tab (wL L).val (2 * t1.val + 1) (2 * k.val + 1) 1 _ hRB ⟨49, by decide⟩ ⟨2, by decide⟩ _ rfl _ hw_v1606 _ (k1_off111_form ..) _ hc16
      have hP_B2 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val + 1)) (offF fl (wL L).val (2 * t1.val + 1) (2 * k.val + 1)) 2 0) (shapeCast S16 (pair1_lt.sl.v1689_3 d L tab k r g1 g2 hR hin h9) hc16)) (shapeCast S16 (pair1_lt.sl.v1725_3 d L tab k r g1 g2 hR hin h9) hc16)) (shapeCast S16 (pair1_lt.sl.v1761_3 d L tab k r g1 g2 hR hin h9) hc16)) (shapeCast S16 (pair1_lt.sl.v1797_3 d L tab k r g1 g2 hR hin h9) hc16)) (shapeCast S16 (pair1_lt.sl.v1833_3 d L tab k r g1 g2 hR hin h9) hc16)) (shapeCast S16 (pair1_lt.sl.v1869_3 d L tab k r g1 g2 hR hin h9) hc16)) (shapeCast S16 (pair1_lt.sl.v1905_3 d L tab k r g1 g2 hR hin h9) hc16)) (shapeCast S16 (pair1_lt.sl.v1941_3 d L tab k r g1 g2 hR hin h9) hc16)) (shapeCast S16 (pair1_lt.sl.v1977_3 d L tab k r g1 g2 hR hin h9) hc16)) (shapeCast S16 (pair1_lt.sl.v2013_3 d L tab k r g1 g2 hR hin h9) hc16)) (shapeCast S16 (pair1_lt.sl.v2049_3 d L tab k r g1 g2 hR hin h9) hc16)) (shapeCast S16 (pair1_lt.sl.v2085_3 d L tab k r g1 g2 hR hin h9) hc16)) (shapeCast S16 (pair1_lt.sl.v2121_3 d L tab k r g1 g2 hR hin h9) hc16)) (shapeCast S16 (pair1_lt.sl.v2157_3 d L tab k r g1 g2 hR hin h9) hc16)) (shapeCast S16 (pair1_lt.sl.v2193_3 d L tab k r g1 g2 hR hin h9) hc16)) (shapeCast S16 (pair1_lt.sl.v2229_3 d L tab k r g1 g2 hR hin h9) hc16)) (shapeCast S16 (pair1_lt.sl.v1689_4 d L tab k r g1 g2 hR hin h9) hc16)) (shapeCast S16 (pair1_lt.sl.v1725_4 d L tab k r g1 g2 hR hin h9) hc16)) (shapeCast S16 (pair1_lt.sl.v1761_4 d L tab k r g1 g2 hR hin h9) hc16)) (shapeCast S16 (pair1_lt.sl.v1797_4 d L tab k r g1 g2 hR hin h9) hc16)) (shapeCast S16 (pair1_lt.sl.v1833_4 d L tab k r g1 g2 hR hin h9) hc16)) (shapeCast S16 (pair1_lt.sl.v1869_4 d L tab k r g1 g2 hR hin h9) hc16)) (shapeCast S16 (pair1_lt.sl.v1905_4 d L tab k r g1 g2 hR hin h9) hc16)) (shapeCast S16 (pair1_lt.sl.v1941_4 d L tab k r g1 g2 hR hin h9) hc16)) (shapeCast S16 (pair1_lt.sl.v1977_4 d L tab k r g1 g2 hR hin h9) hc16)) (shapeCast S16 (pair1_lt.sl.v2013_4 d L tab k r g1 g2 hR hin h9) hc16)) (shapeCast S16 (pair1_lt.sl.v2049_4 d L tab k r g1 g2 hR hin h9) hc16)) (shapeCast S16 (pair1_lt.sl.v2085_4 d L tab k r g1 g2 hR hin h9) hc16)) (shapeCast S16 (pair1_lt.sl.v2121_4 d L tab k r g1 g2 hR hin h9) hc16)) (shapeCast S16 (pair1_lt.sl.v2157_4 d L tab k r g1 g2 hR hin h9) hc16)) (shapeCast S16 (pair1_lt.sl.v2193_4 d L tab k r g1 g2 hR hin h9) hc16)) (shapeCast S16 (pair1_lt.sl.v2229_4 d L tab k r g1 g2 hR hin h9) hc16)) (shapeCast S16 (pair1_lt.sl.v1689_5 d L tab k r g1 g2 hR hin h9) hc16)) (shapeCast S16 (pair1_lt.sl.v1725_5 d L tab k r g1 g2 hR hin h9) hc16)) (shapeCast S16 (pair1_lt.sl.v1761_5 d L tab k r g1 g2 hR hin h9) hc16)) (shapeCast S16 (pair1_lt.sl.v1797_5 d L tab k r g1 g2 hR hin h9) hc16)) (shapeCast S16 (pair1_lt.sl.v1833_5 d L tab k r g1 g2 hR hin h9) hc16)) (shapeCast S16 (pair1_lt.sl.v1869_5 d L tab k r g1 g2 hR hin h9) hc16)) (shapeCast S16 (pair1_lt.sl.v1905_5 d L tab k r g1 g2 hR hin h9) hc16)) (shapeCast S16 (pair1_lt.sl.v1941_5 d L tab k r g1 g2 hR hin h9) hc16)) (shapeCast S16 (pair1_lt.sl.v1977_5 d L tab k r g1 g2 hR hin h9) hc16)) (shapeCast S16 (pair1_lt.sl.v2013_5 d L tab k r g1 g2 hR hin h9) hc16)) (shapeCast S16 (pair1_lt.sl.v2049_5 d L tab k r g1 g2 hR hin h9) hc16)) (shapeCast S16 (pair1_lt.sl.v2085_5 d L tab k r g1 g2 hR hin h9) hc16)) (shapeCast S16 (pair1_lt.sl.v2121_5 d L tab k r g1 g2 hR hin h9) hc16)) (shapeCast S16 (pair1_lt.sl.v2157_5 d L tab k r g1 g2 hR hin h9) hc16)) (shapeCast S16 (pair1_lt.sl.v2193_5 d L tab k r g1 g2 hR hin h9) hc16)) (shapeCast S16 (pair1_lt.sl.v2229_5 d L tab k r g1 g2 hR hin h9) hc16)) (shapeCast S16 (pair1_lt.sl.v1594 d L tab k r g1 g2 hR hin h9) hc16)) (shapeCast S16 (pair1_lt.sl.v1628 d L tab k r g1 g2 hR hin h9) hc16)) hc1 x = Spec.bagPartial fl tab (128 * (wL L).val + 16 * (2 * t1.val + 1) + (2 * k.val + 1)) (16 * 2 + (x 2).val) 50 := fun x => by
        rw [s_B2_0, s_B2_1, s_B2_2, s_B2_3, s_B2_4, s_B2_5, s_B2_6, s_B2_7, s_B2_8, s_B2_9, s_B2_10, s_B2_11, s_B2_12, s_B2_13, s_B2_14, s_B2_15, s_B2_16, s_B2_17, s_B2_18, s_B2_19, s_B2_20, s_B2_21, s_B2_22, s_B2_23, s_B2_24, s_B2_25, s_B2_26, s_B2_27, s_B2_28, s_B2_29, s_B2_30, s_B2_31, s_B2_32, s_B2_33, s_B2_34, s_B2_35, s_B2_36, s_B2_37, s_B2_38, s_B2_39, s_B2_40, s_B2_41, s_B2_42, s_B2_43, s_B2_44, s_B2_45, s_B2_46, s_B2_47, s_B2_48, s_B2_49]
        exact payload_ok fl tab (wL L).val (2 * t1.val + 1) (2 * k.val + 1) ⟨2, by decide⟩ hc1 x
      have s_B3_0 : addf (AccMath.accVec (rowF fl tab (wL L).val (2 * t1.val + 1) (2 * k.val + 1)) (offF fl (wL L).val (2 * t1.val + 1) (2 * k.val + 1)) 3 0) (shapeCast S16 (pair1_lt.sl.v1697_3 d L tab k r g1 g2 hR hin h9) hc16) = AccMath.accVec (rowF fl tab (wL L).val (2 * t1.val + 1) (2 * k.val + 1)) (offF fl (wL L).val (2 * t1.val + 1) (2 * k.val + 1)) 3 1 :=
        acc_step d L fl tab (wL L).val (2 * t1.val + 1) (2 * k.val + 1) 1 _ hRB ⟨0, by decide⟩ ⟨3, by decide⟩ _ rfl _ hw_v1667_3 _ (k1_off93_form ..) _ hc16
      have s_B3_1 : addf (AccMath.accVec (rowF fl tab (wL L).val (2 * t1.val + 1) (2 * k.val + 1)) (offF fl (wL L).val (2 * t1.val + 1) (2 * k.val + 1)) 3 1) (shapeCast S16 (pair1_lt.sl.v1733_3 d L tab k r g1 g2 hR hin h9) hc16) = AccMath.accVec (rowF fl tab (wL L).val (2 * t1.val + 1) (2 * k.val + 1)) (offF fl (wL L).val (2 * t1.val + 1) (2 * k.val + 1)) 3 2 :=
        acc_step d L fl tab (wL L).val (2 * t1.val + 1) (2 * k.val + 1) 1 _ hRB ⟨1, by decide⟩ ⟨3, by decide⟩ _ rfl _ hw_v1703_3 _ (k1_off94_form ..) _ hc16
      have s_B3_2 : addf (AccMath.accVec (rowF fl tab (wL L).val (2 * t1.val + 1) (2 * k.val + 1)) (offF fl (wL L).val (2 * t1.val + 1) (2 * k.val + 1)) 3 2) (shapeCast S16 (pair1_lt.sl.v1769_3 d L tab k r g1 g2 hR hin h9) hc16) = AccMath.accVec (rowF fl tab (wL L).val (2 * t1.val + 1) (2 * k.val + 1)) (offF fl (wL L).val (2 * t1.val + 1) (2 * k.val + 1)) 3 3 :=
        acc_step d L fl tab (wL L).val (2 * t1.val + 1) (2 * k.val + 1) 1 _ hRB ⟨2, by decide⟩ ⟨3, by decide⟩ _ rfl _ hw_v1739_3 _ (k1_off95_form ..) _ hc16
      have s_B3_3 : addf (AccMath.accVec (rowF fl tab (wL L).val (2 * t1.val + 1) (2 * k.val + 1)) (offF fl (wL L).val (2 * t1.val + 1) (2 * k.val + 1)) 3 3) (shapeCast S16 (pair1_lt.sl.v1805_3 d L tab k r g1 g2 hR hin h9) hc16) = AccMath.accVec (rowF fl tab (wL L).val (2 * t1.val + 1) (2 * k.val + 1)) (offF fl (wL L).val (2 * t1.val + 1) (2 * k.val + 1)) 3 4 :=
        acc_step d L fl tab (wL L).val (2 * t1.val + 1) (2 * k.val + 1) 1 _ hRB ⟨3, by decide⟩ ⟨3, by decide⟩ _ rfl _ hw_v1775_3 _ (k1_off96_form ..) _ hc16
      have s_B3_4 : addf (AccMath.accVec (rowF fl tab (wL L).val (2 * t1.val + 1) (2 * k.val + 1)) (offF fl (wL L).val (2 * t1.val + 1) (2 * k.val + 1)) 3 4) (shapeCast S16 (pair1_lt.sl.v1841_3 d L tab k r g1 g2 hR hin h9) hc16) = AccMath.accVec (rowF fl tab (wL L).val (2 * t1.val + 1) (2 * k.val + 1)) (offF fl (wL L).val (2 * t1.val + 1) (2 * k.val + 1)) 3 5 :=
        acc_step d L fl tab (wL L).val (2 * t1.val + 1) (2 * k.val + 1) 1 _ hRB ⟨4, by decide⟩ ⟨3, by decide⟩ _ rfl _ hw_v1811_3 _ (k1_off97_form ..) _ hc16
      have s_B3_5 : addf (AccMath.accVec (rowF fl tab (wL L).val (2 * t1.val + 1) (2 * k.val + 1)) (offF fl (wL L).val (2 * t1.val + 1) (2 * k.val + 1)) 3 5) (shapeCast S16 (pair1_lt.sl.v1877_3 d L tab k r g1 g2 hR hin h9) hc16) = AccMath.accVec (rowF fl tab (wL L).val (2 * t1.val + 1) (2 * k.val + 1)) (offF fl (wL L).val (2 * t1.val + 1) (2 * k.val + 1)) 3 6 :=
        acc_step d L fl tab (wL L).val (2 * t1.val + 1) (2 * k.val + 1) 1 _ hRB ⟨5, by decide⟩ ⟨3, by decide⟩ _ rfl _ hw_v1847_3 _ (k1_off98_form ..) _ hc16
      have s_B3_6 : addf (AccMath.accVec (rowF fl tab (wL L).val (2 * t1.val + 1) (2 * k.val + 1)) (offF fl (wL L).val (2 * t1.val + 1) (2 * k.val + 1)) 3 6) (shapeCast S16 (pair1_lt.sl.v1913_3 d L tab k r g1 g2 hR hin h9) hc16) = AccMath.accVec (rowF fl tab (wL L).val (2 * t1.val + 1) (2 * k.val + 1)) (offF fl (wL L).val (2 * t1.val + 1) (2 * k.val + 1)) 3 7 :=
        acc_step d L fl tab (wL L).val (2 * t1.val + 1) (2 * k.val + 1) 1 _ hRB ⟨6, by decide⟩ ⟨3, by decide⟩ _ rfl _ hw_v1883_3 _ (k1_off99_form ..) _ hc16
      have s_B3_7 : addf (AccMath.accVec (rowF fl tab (wL L).val (2 * t1.val + 1) (2 * k.val + 1)) (offF fl (wL L).val (2 * t1.val + 1) (2 * k.val + 1)) 3 7) (shapeCast S16 (pair1_lt.sl.v1949_3 d L tab k r g1 g2 hR hin h9) hc16) = AccMath.accVec (rowF fl tab (wL L).val (2 * t1.val + 1) (2 * k.val + 1)) (offF fl (wL L).val (2 * t1.val + 1) (2 * k.val + 1)) 3 8 :=
        acc_step d L fl tab (wL L).val (2 * t1.val + 1) (2 * k.val + 1) 1 _ hRB ⟨7, by decide⟩ ⟨3, by decide⟩ _ rfl _ hw_v1919_3 _ (k1_off100_form ..) _ hc16
      have s_B3_8 : addf (AccMath.accVec (rowF fl tab (wL L).val (2 * t1.val + 1) (2 * k.val + 1)) (offF fl (wL L).val (2 * t1.val + 1) (2 * k.val + 1)) 3 8) (shapeCast S16 (pair1_lt.sl.v1985_3 d L tab k r g1 g2 hR hin h9) hc16) = AccMath.accVec (rowF fl tab (wL L).val (2 * t1.val + 1) (2 * k.val + 1)) (offF fl (wL L).val (2 * t1.val + 1) (2 * k.val + 1)) 3 9 :=
        acc_step d L fl tab (wL L).val (2 * t1.val + 1) (2 * k.val + 1) 1 _ hRB ⟨8, by decide⟩ ⟨3, by decide⟩ _ rfl _ hw_v1955_3 _ (k1_off101_form ..) _ hc16
      have s_B3_9 : addf (AccMath.accVec (rowF fl tab (wL L).val (2 * t1.val + 1) (2 * k.val + 1)) (offF fl (wL L).val (2 * t1.val + 1) (2 * k.val + 1)) 3 9) (shapeCast S16 (pair1_lt.sl.v2021_3 d L tab k r g1 g2 hR hin h9) hc16) = AccMath.accVec (rowF fl tab (wL L).val (2 * t1.val + 1) (2 * k.val + 1)) (offF fl (wL L).val (2 * t1.val + 1) (2 * k.val + 1)) 3 10 :=
        acc_step d L fl tab (wL L).val (2 * t1.val + 1) (2 * k.val + 1) 1 _ hRB ⟨9, by decide⟩ ⟨3, by decide⟩ _ rfl _ hw_v1991_3 _ (k1_off102_form ..) _ hc16
      have s_B3_10 : addf (AccMath.accVec (rowF fl tab (wL L).val (2 * t1.val + 1) (2 * k.val + 1)) (offF fl (wL L).val (2 * t1.val + 1) (2 * k.val + 1)) 3 10) (shapeCast S16 (pair1_lt.sl.v2057_3 d L tab k r g1 g2 hR hin h9) hc16) = AccMath.accVec (rowF fl tab (wL L).val (2 * t1.val + 1) (2 * k.val + 1)) (offF fl (wL L).val (2 * t1.val + 1) (2 * k.val + 1)) 3 11 :=
        acc_step d L fl tab (wL L).val (2 * t1.val + 1) (2 * k.val + 1) 1 _ hRB ⟨10, by decide⟩ ⟨3, by decide⟩ _ rfl _ hw_v2027_3 _ (k1_off103_form ..) _ hc16
      have s_B3_11 : addf (AccMath.accVec (rowF fl tab (wL L).val (2 * t1.val + 1) (2 * k.val + 1)) (offF fl (wL L).val (2 * t1.val + 1) (2 * k.val + 1)) 3 11) (shapeCast S16 (pair1_lt.sl.v2093_3 d L tab k r g1 g2 hR hin h9) hc16) = AccMath.accVec (rowF fl tab (wL L).val (2 * t1.val + 1) (2 * k.val + 1)) (offF fl (wL L).val (2 * t1.val + 1) (2 * k.val + 1)) 3 12 :=
        acc_step d L fl tab (wL L).val (2 * t1.val + 1) (2 * k.val + 1) 1 _ hRB ⟨11, by decide⟩ ⟨3, by decide⟩ _ rfl _ hw_v2063_3 _ (k1_off104_form ..) _ hc16
      have s_B3_12 : addf (AccMath.accVec (rowF fl tab (wL L).val (2 * t1.val + 1) (2 * k.val + 1)) (offF fl (wL L).val (2 * t1.val + 1) (2 * k.val + 1)) 3 12) (shapeCast S16 (pair1_lt.sl.v2129_3 d L tab k r g1 g2 hR hin h9) hc16) = AccMath.accVec (rowF fl tab (wL L).val (2 * t1.val + 1) (2 * k.val + 1)) (offF fl (wL L).val (2 * t1.val + 1) (2 * k.val + 1)) 3 13 :=
        acc_step d L fl tab (wL L).val (2 * t1.val + 1) (2 * k.val + 1) 1 _ hRB ⟨12, by decide⟩ ⟨3, by decide⟩ _ rfl _ hw_v2099_3 _ (k1_off105_form ..) _ hc16
      have s_B3_13 : addf (AccMath.accVec (rowF fl tab (wL L).val (2 * t1.val + 1) (2 * k.val + 1)) (offF fl (wL L).val (2 * t1.val + 1) (2 * k.val + 1)) 3 13) (shapeCast S16 (pair1_lt.sl.v2165_3 d L tab k r g1 g2 hR hin h9) hc16) = AccMath.accVec (rowF fl tab (wL L).val (2 * t1.val + 1) (2 * k.val + 1)) (offF fl (wL L).val (2 * t1.val + 1) (2 * k.val + 1)) 3 14 :=
        acc_step d L fl tab (wL L).val (2 * t1.val + 1) (2 * k.val + 1) 1 _ hRB ⟨13, by decide⟩ ⟨3, by decide⟩ _ rfl _ hw_v2135_3 _ (k1_off106_form ..) _ hc16
      have s_B3_14 : addf (AccMath.accVec (rowF fl tab (wL L).val (2 * t1.val + 1) (2 * k.val + 1)) (offF fl (wL L).val (2 * t1.val + 1) (2 * k.val + 1)) 3 14) (shapeCast S16 (pair1_lt.sl.v2201_3 d L tab k r g1 g2 hR hin h9) hc16) = AccMath.accVec (rowF fl tab (wL L).val (2 * t1.val + 1) (2 * k.val + 1)) (offF fl (wL L).val (2 * t1.val + 1) (2 * k.val + 1)) 3 15 :=
        acc_step d L fl tab (wL L).val (2 * t1.val + 1) (2 * k.val + 1) 1 _ hRB ⟨14, by decide⟩ ⟨3, by decide⟩ _ rfl _ hw_v2171_3 _ (k1_off107_form ..) _ hc16
      have s_B3_15 : addf (AccMath.accVec (rowF fl tab (wL L).val (2 * t1.val + 1) (2 * k.val + 1)) (offF fl (wL L).val (2 * t1.val + 1) (2 * k.val + 1)) 3 15) (shapeCast S16 (pair1_lt.sl.v2237_3 d L tab k r g1 g2 hR hin h9) hc16) = AccMath.accVec (rowF fl tab (wL L).val (2 * t1.val + 1) (2 * k.val + 1)) (offF fl (wL L).val (2 * t1.val + 1) (2 * k.val + 1)) 3 16 :=
        acc_step d L fl tab (wL L).val (2 * t1.val + 1) (2 * k.val + 1) 1 _ hRB ⟨15, by decide⟩ ⟨3, by decide⟩ _ rfl _ hw_v2207_3 _ (k1_off108_form ..) _ hc16
      have s_B3_16 : addf (AccMath.accVec (rowF fl tab (wL L).val (2 * t1.val + 1) (2 * k.val + 1)) (offF fl (wL L).val (2 * t1.val + 1) (2 * k.val + 1)) 3 16) (shapeCast S16 (pair1_lt.sl.v1697_4 d L tab k r g1 g2 hR hin h9) hc16) = AccMath.accVec (rowF fl tab (wL L).val (2 * t1.val + 1) (2 * k.val + 1)) (offF fl (wL L).val (2 * t1.val + 1) (2 * k.val + 1)) 3 17 :=
        acc_step d L fl tab (wL L).val (2 * t1.val + 1) (2 * k.val + 1) 1 _ hRB ⟨16, by decide⟩ ⟨3, by decide⟩ _ rfl _ hw_v1667_4 _ (k1_off93_form ..) _ hc16
      have s_B3_17 : addf (AccMath.accVec (rowF fl tab (wL L).val (2 * t1.val + 1) (2 * k.val + 1)) (offF fl (wL L).val (2 * t1.val + 1) (2 * k.val + 1)) 3 17) (shapeCast S16 (pair1_lt.sl.v1733_4 d L tab k r g1 g2 hR hin h9) hc16) = AccMath.accVec (rowF fl tab (wL L).val (2 * t1.val + 1) (2 * k.val + 1)) (offF fl (wL L).val (2 * t1.val + 1) (2 * k.val + 1)) 3 18 :=
        acc_step d L fl tab (wL L).val (2 * t1.val + 1) (2 * k.val + 1) 1 _ hRB ⟨17, by decide⟩ ⟨3, by decide⟩ _ rfl _ hw_v1703_4 _ (k1_off94_form ..) _ hc16
      have s_B3_18 : addf (AccMath.accVec (rowF fl tab (wL L).val (2 * t1.val + 1) (2 * k.val + 1)) (offF fl (wL L).val (2 * t1.val + 1) (2 * k.val + 1)) 3 18) (shapeCast S16 (pair1_lt.sl.v1769_4 d L tab k r g1 g2 hR hin h9) hc16) = AccMath.accVec (rowF fl tab (wL L).val (2 * t1.val + 1) (2 * k.val + 1)) (offF fl (wL L).val (2 * t1.val + 1) (2 * k.val + 1)) 3 19 :=
        acc_step d L fl tab (wL L).val (2 * t1.val + 1) (2 * k.val + 1) 1 _ hRB ⟨18, by decide⟩ ⟨3, by decide⟩ _ rfl _ hw_v1739_4 _ (k1_off95_form ..) _ hc16
      have s_B3_19 : addf (AccMath.accVec (rowF fl tab (wL L).val (2 * t1.val + 1) (2 * k.val + 1)) (offF fl (wL L).val (2 * t1.val + 1) (2 * k.val + 1)) 3 19) (shapeCast S16 (pair1_lt.sl.v1805_4 d L tab k r g1 g2 hR hin h9) hc16) = AccMath.accVec (rowF fl tab (wL L).val (2 * t1.val + 1) (2 * k.val + 1)) (offF fl (wL L).val (2 * t1.val + 1) (2 * k.val + 1)) 3 20 :=
        acc_step d L fl tab (wL L).val (2 * t1.val + 1) (2 * k.val + 1) 1 _ hRB ⟨19, by decide⟩ ⟨3, by decide⟩ _ rfl _ hw_v1775_4 _ (k1_off96_form ..) _ hc16
      have s_B3_20 : addf (AccMath.accVec (rowF fl tab (wL L).val (2 * t1.val + 1) (2 * k.val + 1)) (offF fl (wL L).val (2 * t1.val + 1) (2 * k.val + 1)) 3 20) (shapeCast S16 (pair1_lt.sl.v1841_4 d L tab k r g1 g2 hR hin h9) hc16) = AccMath.accVec (rowF fl tab (wL L).val (2 * t1.val + 1) (2 * k.val + 1)) (offF fl (wL L).val (2 * t1.val + 1) (2 * k.val + 1)) 3 21 :=
        acc_step d L fl tab (wL L).val (2 * t1.val + 1) (2 * k.val + 1) 1 _ hRB ⟨20, by decide⟩ ⟨3, by decide⟩ _ rfl _ hw_v1811_4 _ (k1_off97_form ..) _ hc16
      have s_B3_21 : addf (AccMath.accVec (rowF fl tab (wL L).val (2 * t1.val + 1) (2 * k.val + 1)) (offF fl (wL L).val (2 * t1.val + 1) (2 * k.val + 1)) 3 21) (shapeCast S16 (pair1_lt.sl.v1877_4 d L tab k r g1 g2 hR hin h9) hc16) = AccMath.accVec (rowF fl tab (wL L).val (2 * t1.val + 1) (2 * k.val + 1)) (offF fl (wL L).val (2 * t1.val + 1) (2 * k.val + 1)) 3 22 :=
        acc_step d L fl tab (wL L).val (2 * t1.val + 1) (2 * k.val + 1) 1 _ hRB ⟨21, by decide⟩ ⟨3, by decide⟩ _ rfl _ hw_v1847_4 _ (k1_off98_form ..) _ hc16
      have s_B3_22 : addf (AccMath.accVec (rowF fl tab (wL L).val (2 * t1.val + 1) (2 * k.val + 1)) (offF fl (wL L).val (2 * t1.val + 1) (2 * k.val + 1)) 3 22) (shapeCast S16 (pair1_lt.sl.v1913_4 d L tab k r g1 g2 hR hin h9) hc16) = AccMath.accVec (rowF fl tab (wL L).val (2 * t1.val + 1) (2 * k.val + 1)) (offF fl (wL L).val (2 * t1.val + 1) (2 * k.val + 1)) 3 23 :=
        acc_step d L fl tab (wL L).val (2 * t1.val + 1) (2 * k.val + 1) 1 _ hRB ⟨22, by decide⟩ ⟨3, by decide⟩ _ rfl _ hw_v1883_4 _ (k1_off99_form ..) _ hc16
      have s_B3_23 : addf (AccMath.accVec (rowF fl tab (wL L).val (2 * t1.val + 1) (2 * k.val + 1)) (offF fl (wL L).val (2 * t1.val + 1) (2 * k.val + 1)) 3 23) (shapeCast S16 (pair1_lt.sl.v1949_4 d L tab k r g1 g2 hR hin h9) hc16) = AccMath.accVec (rowF fl tab (wL L).val (2 * t1.val + 1) (2 * k.val + 1)) (offF fl (wL L).val (2 * t1.val + 1) (2 * k.val + 1)) 3 24 :=
        acc_step d L fl tab (wL L).val (2 * t1.val + 1) (2 * k.val + 1) 1 _ hRB ⟨23, by decide⟩ ⟨3, by decide⟩ _ rfl _ hw_v1919_4 _ (k1_off100_form ..) _ hc16
      have s_B3_24 : addf (AccMath.accVec (rowF fl tab (wL L).val (2 * t1.val + 1) (2 * k.val + 1)) (offF fl (wL L).val (2 * t1.val + 1) (2 * k.val + 1)) 3 24) (shapeCast S16 (pair1_lt.sl.v1985_4 d L tab k r g1 g2 hR hin h9) hc16) = AccMath.accVec (rowF fl tab (wL L).val (2 * t1.val + 1) (2 * k.val + 1)) (offF fl (wL L).val (2 * t1.val + 1) (2 * k.val + 1)) 3 25 :=
        acc_step d L fl tab (wL L).val (2 * t1.val + 1) (2 * k.val + 1) 1 _ hRB ⟨24, by decide⟩ ⟨3, by decide⟩ _ rfl _ hw_v1955_4 _ (k1_off101_form ..) _ hc16
      have s_B3_25 : addf (AccMath.accVec (rowF fl tab (wL L).val (2 * t1.val + 1) (2 * k.val + 1)) (offF fl (wL L).val (2 * t1.val + 1) (2 * k.val + 1)) 3 25) (shapeCast S16 (pair1_lt.sl.v2021_4 d L tab k r g1 g2 hR hin h9) hc16) = AccMath.accVec (rowF fl tab (wL L).val (2 * t1.val + 1) (2 * k.val + 1)) (offF fl (wL L).val (2 * t1.val + 1) (2 * k.val + 1)) 3 26 :=
        acc_step d L fl tab (wL L).val (2 * t1.val + 1) (2 * k.val + 1) 1 _ hRB ⟨25, by decide⟩ ⟨3, by decide⟩ _ rfl _ hw_v1991_4 _ (k1_off102_form ..) _ hc16
      have s_B3_26 : addf (AccMath.accVec (rowF fl tab (wL L).val (2 * t1.val + 1) (2 * k.val + 1)) (offF fl (wL L).val (2 * t1.val + 1) (2 * k.val + 1)) 3 26) (shapeCast S16 (pair1_lt.sl.v2057_4 d L tab k r g1 g2 hR hin h9) hc16) = AccMath.accVec (rowF fl tab (wL L).val (2 * t1.val + 1) (2 * k.val + 1)) (offF fl (wL L).val (2 * t1.val + 1) (2 * k.val + 1)) 3 27 :=
        acc_step d L fl tab (wL L).val (2 * t1.val + 1) (2 * k.val + 1) 1 _ hRB ⟨26, by decide⟩ ⟨3, by decide⟩ _ rfl _ hw_v2027_4 _ (k1_off103_form ..) _ hc16
      have s_B3_27 : addf (AccMath.accVec (rowF fl tab (wL L).val (2 * t1.val + 1) (2 * k.val + 1)) (offF fl (wL L).val (2 * t1.val + 1) (2 * k.val + 1)) 3 27) (shapeCast S16 (pair1_lt.sl.v2093_4 d L tab k r g1 g2 hR hin h9) hc16) = AccMath.accVec (rowF fl tab (wL L).val (2 * t1.val + 1) (2 * k.val + 1)) (offF fl (wL L).val (2 * t1.val + 1) (2 * k.val + 1)) 3 28 :=
        acc_step d L fl tab (wL L).val (2 * t1.val + 1) (2 * k.val + 1) 1 _ hRB ⟨27, by decide⟩ ⟨3, by decide⟩ _ rfl _ hw_v2063_4 _ (k1_off104_form ..) _ hc16
      have s_B3_28 : addf (AccMath.accVec (rowF fl tab (wL L).val (2 * t1.val + 1) (2 * k.val + 1)) (offF fl (wL L).val (2 * t1.val + 1) (2 * k.val + 1)) 3 28) (shapeCast S16 (pair1_lt.sl.v2129_4 d L tab k r g1 g2 hR hin h9) hc16) = AccMath.accVec (rowF fl tab (wL L).val (2 * t1.val + 1) (2 * k.val + 1)) (offF fl (wL L).val (2 * t1.val + 1) (2 * k.val + 1)) 3 29 :=
        acc_step d L fl tab (wL L).val (2 * t1.val + 1) (2 * k.val + 1) 1 _ hRB ⟨28, by decide⟩ ⟨3, by decide⟩ _ rfl _ hw_v2099_4 _ (k1_off105_form ..) _ hc16
      have s_B3_29 : addf (AccMath.accVec (rowF fl tab (wL L).val (2 * t1.val + 1) (2 * k.val + 1)) (offF fl (wL L).val (2 * t1.val + 1) (2 * k.val + 1)) 3 29) (shapeCast S16 (pair1_lt.sl.v2165_4 d L tab k r g1 g2 hR hin h9) hc16) = AccMath.accVec (rowF fl tab (wL L).val (2 * t1.val + 1) (2 * k.val + 1)) (offF fl (wL L).val (2 * t1.val + 1) (2 * k.val + 1)) 3 30 :=
        acc_step d L fl tab (wL L).val (2 * t1.val + 1) (2 * k.val + 1) 1 _ hRB ⟨29, by decide⟩ ⟨3, by decide⟩ _ rfl _ hw_v2135_4 _ (k1_off106_form ..) _ hc16
      have s_B3_30 : addf (AccMath.accVec (rowF fl tab (wL L).val (2 * t1.val + 1) (2 * k.val + 1)) (offF fl (wL L).val (2 * t1.val + 1) (2 * k.val + 1)) 3 30) (shapeCast S16 (pair1_lt.sl.v2201_4 d L tab k r g1 g2 hR hin h9) hc16) = AccMath.accVec (rowF fl tab (wL L).val (2 * t1.val + 1) (2 * k.val + 1)) (offF fl (wL L).val (2 * t1.val + 1) (2 * k.val + 1)) 3 31 :=
        acc_step d L fl tab (wL L).val (2 * t1.val + 1) (2 * k.val + 1) 1 _ hRB ⟨30, by decide⟩ ⟨3, by decide⟩ _ rfl _ hw_v2171_4 _ (k1_off107_form ..) _ hc16
      have s_B3_31 : addf (AccMath.accVec (rowF fl tab (wL L).val (2 * t1.val + 1) (2 * k.val + 1)) (offF fl (wL L).val (2 * t1.val + 1) (2 * k.val + 1)) 3 31) (shapeCast S16 (pair1_lt.sl.v2237_4 d L tab k r g1 g2 hR hin h9) hc16) = AccMath.accVec (rowF fl tab (wL L).val (2 * t1.val + 1) (2 * k.val + 1)) (offF fl (wL L).val (2 * t1.val + 1) (2 * k.val + 1)) 3 32 :=
        acc_step d L fl tab (wL L).val (2 * t1.val + 1) (2 * k.val + 1) 1 _ hRB ⟨31, by decide⟩ ⟨3, by decide⟩ _ rfl _ hw_v2207_4 _ (k1_off108_form ..) _ hc16
      have s_B3_32 : addf (AccMath.accVec (rowF fl tab (wL L).val (2 * t1.val + 1) (2 * k.val + 1)) (offF fl (wL L).val (2 * t1.val + 1) (2 * k.val + 1)) 3 32) (shapeCast S16 (pair1_lt.sl.v1697_5 d L tab k r g1 g2 hR hin h9) hc16) = AccMath.accVec (rowF fl tab (wL L).val (2 * t1.val + 1) (2 * k.val + 1)) (offF fl (wL L).val (2 * t1.val + 1) (2 * k.val + 1)) 3 33 :=
        acc_step d L fl tab (wL L).val (2 * t1.val + 1) (2 * k.val + 1) 1 _ hRB ⟨32, by decide⟩ ⟨3, by decide⟩ _ rfl _ hw_v1667_5 _ (k1_off93_form ..) _ hc16
      have s_B3_33 : addf (AccMath.accVec (rowF fl tab (wL L).val (2 * t1.val + 1) (2 * k.val + 1)) (offF fl (wL L).val (2 * t1.val + 1) (2 * k.val + 1)) 3 33) (shapeCast S16 (pair1_lt.sl.v1733_5 d L tab k r g1 g2 hR hin h9) hc16) = AccMath.accVec (rowF fl tab (wL L).val (2 * t1.val + 1) (2 * k.val + 1)) (offF fl (wL L).val (2 * t1.val + 1) (2 * k.val + 1)) 3 34 :=
        acc_step d L fl tab (wL L).val (2 * t1.val + 1) (2 * k.val + 1) 1 _ hRB ⟨33, by decide⟩ ⟨3, by decide⟩ _ rfl _ hw_v1703_5 _ (k1_off94_form ..) _ hc16
      have s_B3_34 : addf (AccMath.accVec (rowF fl tab (wL L).val (2 * t1.val + 1) (2 * k.val + 1)) (offF fl (wL L).val (2 * t1.val + 1) (2 * k.val + 1)) 3 34) (shapeCast S16 (pair1_lt.sl.v1769_5 d L tab k r g1 g2 hR hin h9) hc16) = AccMath.accVec (rowF fl tab (wL L).val (2 * t1.val + 1) (2 * k.val + 1)) (offF fl (wL L).val (2 * t1.val + 1) (2 * k.val + 1)) 3 35 :=
        acc_step d L fl tab (wL L).val (2 * t1.val + 1) (2 * k.val + 1) 1 _ hRB ⟨34, by decide⟩ ⟨3, by decide⟩ _ rfl _ hw_v1739_5 _ (k1_off95_form ..) _ hc16
      have s_B3_35 : addf (AccMath.accVec (rowF fl tab (wL L).val (2 * t1.val + 1) (2 * k.val + 1)) (offF fl (wL L).val (2 * t1.val + 1) (2 * k.val + 1)) 3 35) (shapeCast S16 (pair1_lt.sl.v1805_5 d L tab k r g1 g2 hR hin h9) hc16) = AccMath.accVec (rowF fl tab (wL L).val (2 * t1.val + 1) (2 * k.val + 1)) (offF fl (wL L).val (2 * t1.val + 1) (2 * k.val + 1)) 3 36 :=
        acc_step d L fl tab (wL L).val (2 * t1.val + 1) (2 * k.val + 1) 1 _ hRB ⟨35, by decide⟩ ⟨3, by decide⟩ _ rfl _ hw_v1775_5 _ (k1_off96_form ..) _ hc16
      have s_B3_36 : addf (AccMath.accVec (rowF fl tab (wL L).val (2 * t1.val + 1) (2 * k.val + 1)) (offF fl (wL L).val (2 * t1.val + 1) (2 * k.val + 1)) 3 36) (shapeCast S16 (pair1_lt.sl.v1841_5 d L tab k r g1 g2 hR hin h9) hc16) = AccMath.accVec (rowF fl tab (wL L).val (2 * t1.val + 1) (2 * k.val + 1)) (offF fl (wL L).val (2 * t1.val + 1) (2 * k.val + 1)) 3 37 :=
        acc_step d L fl tab (wL L).val (2 * t1.val + 1) (2 * k.val + 1) 1 _ hRB ⟨36, by decide⟩ ⟨3, by decide⟩ _ rfl _ hw_v1811_5 _ (k1_off97_form ..) _ hc16
      have s_B3_37 : addf (AccMath.accVec (rowF fl tab (wL L).val (2 * t1.val + 1) (2 * k.val + 1)) (offF fl (wL L).val (2 * t1.val + 1) (2 * k.val + 1)) 3 37) (shapeCast S16 (pair1_lt.sl.v1877_5 d L tab k r g1 g2 hR hin h9) hc16) = AccMath.accVec (rowF fl tab (wL L).val (2 * t1.val + 1) (2 * k.val + 1)) (offF fl (wL L).val (2 * t1.val + 1) (2 * k.val + 1)) 3 38 :=
        acc_step d L fl tab (wL L).val (2 * t1.val + 1) (2 * k.val + 1) 1 _ hRB ⟨37, by decide⟩ ⟨3, by decide⟩ _ rfl _ hw_v1847_5 _ (k1_off98_form ..) _ hc16
      have s_B3_38 : addf (AccMath.accVec (rowF fl tab (wL L).val (2 * t1.val + 1) (2 * k.val + 1)) (offF fl (wL L).val (2 * t1.val + 1) (2 * k.val + 1)) 3 38) (shapeCast S16 (pair1_lt.sl.v1913_5 d L tab k r g1 g2 hR hin h9) hc16) = AccMath.accVec (rowF fl tab (wL L).val (2 * t1.val + 1) (2 * k.val + 1)) (offF fl (wL L).val (2 * t1.val + 1) (2 * k.val + 1)) 3 39 :=
        acc_step d L fl tab (wL L).val (2 * t1.val + 1) (2 * k.val + 1) 1 _ hRB ⟨38, by decide⟩ ⟨3, by decide⟩ _ rfl _ hw_v1883_5 _ (k1_off99_form ..) _ hc16
      have s_B3_39 : addf (AccMath.accVec (rowF fl tab (wL L).val (2 * t1.val + 1) (2 * k.val + 1)) (offF fl (wL L).val (2 * t1.val + 1) (2 * k.val + 1)) 3 39) (shapeCast S16 (pair1_lt.sl.v1949_5 d L tab k r g1 g2 hR hin h9) hc16) = AccMath.accVec (rowF fl tab (wL L).val (2 * t1.val + 1) (2 * k.val + 1)) (offF fl (wL L).val (2 * t1.val + 1) (2 * k.val + 1)) 3 40 :=
        acc_step d L fl tab (wL L).val (2 * t1.val + 1) (2 * k.val + 1) 1 _ hRB ⟨39, by decide⟩ ⟨3, by decide⟩ _ rfl _ hw_v1919_5 _ (k1_off100_form ..) _ hc16
      have s_B3_40 : addf (AccMath.accVec (rowF fl tab (wL L).val (2 * t1.val + 1) (2 * k.val + 1)) (offF fl (wL L).val (2 * t1.val + 1) (2 * k.val + 1)) 3 40) (shapeCast S16 (pair1_lt.sl.v1985_5 d L tab k r g1 g2 hR hin h9) hc16) = AccMath.accVec (rowF fl tab (wL L).val (2 * t1.val + 1) (2 * k.val + 1)) (offF fl (wL L).val (2 * t1.val + 1) (2 * k.val + 1)) 3 41 :=
        acc_step d L fl tab (wL L).val (2 * t1.val + 1) (2 * k.val + 1) 1 _ hRB ⟨40, by decide⟩ ⟨3, by decide⟩ _ rfl _ hw_v1955_5 _ (k1_off101_form ..) _ hc16
      have s_B3_41 : addf (AccMath.accVec (rowF fl tab (wL L).val (2 * t1.val + 1) (2 * k.val + 1)) (offF fl (wL L).val (2 * t1.val + 1) (2 * k.val + 1)) 3 41) (shapeCast S16 (pair1_lt.sl.v2021_5 d L tab k r g1 g2 hR hin h9) hc16) = AccMath.accVec (rowF fl tab (wL L).val (2 * t1.val + 1) (2 * k.val + 1)) (offF fl (wL L).val (2 * t1.val + 1) (2 * k.val + 1)) 3 42 :=
        acc_step d L fl tab (wL L).val (2 * t1.val + 1) (2 * k.val + 1) 1 _ hRB ⟨41, by decide⟩ ⟨3, by decide⟩ _ rfl _ hw_v1991_5 _ (k1_off102_form ..) _ hc16
      have s_B3_42 : addf (AccMath.accVec (rowF fl tab (wL L).val (2 * t1.val + 1) (2 * k.val + 1)) (offF fl (wL L).val (2 * t1.val + 1) (2 * k.val + 1)) 3 42) (shapeCast S16 (pair1_lt.sl.v2057_5 d L tab k r g1 g2 hR hin h9) hc16) = AccMath.accVec (rowF fl tab (wL L).val (2 * t1.val + 1) (2 * k.val + 1)) (offF fl (wL L).val (2 * t1.val + 1) (2 * k.val + 1)) 3 43 :=
        acc_step d L fl tab (wL L).val (2 * t1.val + 1) (2 * k.val + 1) 1 _ hRB ⟨42, by decide⟩ ⟨3, by decide⟩ _ rfl _ hw_v2027_5 _ (k1_off103_form ..) _ hc16
      have s_B3_43 : addf (AccMath.accVec (rowF fl tab (wL L).val (2 * t1.val + 1) (2 * k.val + 1)) (offF fl (wL L).val (2 * t1.val + 1) (2 * k.val + 1)) 3 43) (shapeCast S16 (pair1_lt.sl.v2093_5 d L tab k r g1 g2 hR hin h9) hc16) = AccMath.accVec (rowF fl tab (wL L).val (2 * t1.val + 1) (2 * k.val + 1)) (offF fl (wL L).val (2 * t1.val + 1) (2 * k.val + 1)) 3 44 :=
        acc_step d L fl tab (wL L).val (2 * t1.val + 1) (2 * k.val + 1) 1 _ hRB ⟨43, by decide⟩ ⟨3, by decide⟩ _ rfl _ hw_v2063_5 _ (k1_off104_form ..) _ hc16
      have s_B3_44 : addf (AccMath.accVec (rowF fl tab (wL L).val (2 * t1.val + 1) (2 * k.val + 1)) (offF fl (wL L).val (2 * t1.val + 1) (2 * k.val + 1)) 3 44) (shapeCast S16 (pair1_lt.sl.v2129_5 d L tab k r g1 g2 hR hin h9) hc16) = AccMath.accVec (rowF fl tab (wL L).val (2 * t1.val + 1) (2 * k.val + 1)) (offF fl (wL L).val (2 * t1.val + 1) (2 * k.val + 1)) 3 45 :=
        acc_step d L fl tab (wL L).val (2 * t1.val + 1) (2 * k.val + 1) 1 _ hRB ⟨44, by decide⟩ ⟨3, by decide⟩ _ rfl _ hw_v2099_5 _ (k1_off105_form ..) _ hc16
      have s_B3_45 : addf (AccMath.accVec (rowF fl tab (wL L).val (2 * t1.val + 1) (2 * k.val + 1)) (offF fl (wL L).val (2 * t1.val + 1) (2 * k.val + 1)) 3 45) (shapeCast S16 (pair1_lt.sl.v2165_5 d L tab k r g1 g2 hR hin h9) hc16) = AccMath.accVec (rowF fl tab (wL L).val (2 * t1.val + 1) (2 * k.val + 1)) (offF fl (wL L).val (2 * t1.val + 1) (2 * k.val + 1)) 3 46 :=
        acc_step d L fl tab (wL L).val (2 * t1.val + 1) (2 * k.val + 1) 1 _ hRB ⟨45, by decide⟩ ⟨3, by decide⟩ _ rfl _ hw_v2135_5 _ (k1_off106_form ..) _ hc16
      have s_B3_46 : addf (AccMath.accVec (rowF fl tab (wL L).val (2 * t1.val + 1) (2 * k.val + 1)) (offF fl (wL L).val (2 * t1.val + 1) (2 * k.val + 1)) 3 46) (shapeCast S16 (pair1_lt.sl.v2201_5 d L tab k r g1 g2 hR hin h9) hc16) = AccMath.accVec (rowF fl tab (wL L).val (2 * t1.val + 1) (2 * k.val + 1)) (offF fl (wL L).val (2 * t1.val + 1) (2 * k.val + 1)) 3 47 :=
        acc_step d L fl tab (wL L).val (2 * t1.val + 1) (2 * k.val + 1) 1 _ hRB ⟨46, by decide⟩ ⟨3, by decide⟩ _ rfl _ hw_v2171_5 _ (k1_off107_form ..) _ hc16
      have s_B3_47 : addf (AccMath.accVec (rowF fl tab (wL L).val (2 * t1.val + 1) (2 * k.val + 1)) (offF fl (wL L).val (2 * t1.val + 1) (2 * k.val + 1)) 3 47) (shapeCast S16 (pair1_lt.sl.v2237_5 d L tab k r g1 g2 hR hin h9) hc16) = AccMath.accVec (rowF fl tab (wL L).val (2 * t1.val + 1) (2 * k.val + 1)) (offF fl (wL L).val (2 * t1.val + 1) (2 * k.val + 1)) 3 48 :=
        acc_step d L fl tab (wL L).val (2 * t1.val + 1) (2 * k.val + 1) 1 _ hRB ⟨47, by decide⟩ ⟨3, by decide⟩ _ rfl _ hw_v2207_5 _ (k1_off108_form ..) _ hc16
      have s_B3_48 : addf (AccMath.accVec (rowF fl tab (wL L).val (2 * t1.val + 1) (2 * k.val + 1)) (offF fl (wL L).val (2 * t1.val + 1) (2 * k.val + 1)) 3 48) (shapeCast S16 (pair1_lt.sl.v1602 d L tab k r g1 g2 hR hin h9) hc16) = AccMath.accVec (rowF fl tab (wL L).val (2 * t1.val + 1) (2 * k.val + 1)) (offF fl (wL L).val (2 * t1.val + 1) (2 * k.val + 1)) 3 49 :=
        acc_step d L fl tab (wL L).val (2 * t1.val + 1) (2 * k.val + 1) 1 _ hRB ⟨48, by decide⟩ ⟨3, by decide⟩ _ rfl _ hw_v1572 _ (k1_off110_form ..) _ hc16
      have s_B3_49 : addf (AccMath.accVec (rowF fl tab (wL L).val (2 * t1.val + 1) (2 * k.val + 1)) (offF fl (wL L).val (2 * t1.val + 1) (2 * k.val + 1)) 3 49) (shapeCast S16 (pair1_lt.sl.v1636 d L tab k r g1 g2 hR hin h9) hc16) = AccMath.accVec (rowF fl tab (wL L).val (2 * t1.val + 1) (2 * k.val + 1)) (offF fl (wL L).val (2 * t1.val + 1) (2 * k.val + 1)) 3 50 :=
        acc_step d L fl tab (wL L).val (2 * t1.val + 1) (2 * k.val + 1) 1 _ hRB ⟨49, by decide⟩ ⟨3, by decide⟩ _ rfl _ hw_v1606 _ (k1_off111_form ..) _ hc16
      have hP_B3 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val + 1)) (offF fl (wL L).val (2 * t1.val + 1) (2 * k.val + 1)) 3 0) (shapeCast S16 (pair1_lt.sl.v1697_3 d L tab k r g1 g2 hR hin h9) hc16)) (shapeCast S16 (pair1_lt.sl.v1733_3 d L tab k r g1 g2 hR hin h9) hc16)) (shapeCast S16 (pair1_lt.sl.v1769_3 d L tab k r g1 g2 hR hin h9) hc16)) (shapeCast S16 (pair1_lt.sl.v1805_3 d L tab k r g1 g2 hR hin h9) hc16)) (shapeCast S16 (pair1_lt.sl.v1841_3 d L tab k r g1 g2 hR hin h9) hc16)) (shapeCast S16 (pair1_lt.sl.v1877_3 d L tab k r g1 g2 hR hin h9) hc16)) (shapeCast S16 (pair1_lt.sl.v1913_3 d L tab k r g1 g2 hR hin h9) hc16)) (shapeCast S16 (pair1_lt.sl.v1949_3 d L tab k r g1 g2 hR hin h9) hc16)) (shapeCast S16 (pair1_lt.sl.v1985_3 d L tab k r g1 g2 hR hin h9) hc16)) (shapeCast S16 (pair1_lt.sl.v2021_3 d L tab k r g1 g2 hR hin h9) hc16)) (shapeCast S16 (pair1_lt.sl.v2057_3 d L tab k r g1 g2 hR hin h9) hc16)) (shapeCast S16 (pair1_lt.sl.v2093_3 d L tab k r g1 g2 hR hin h9) hc16)) (shapeCast S16 (pair1_lt.sl.v2129_3 d L tab k r g1 g2 hR hin h9) hc16)) (shapeCast S16 (pair1_lt.sl.v2165_3 d L tab k r g1 g2 hR hin h9) hc16)) (shapeCast S16 (pair1_lt.sl.v2201_3 d L tab k r g1 g2 hR hin h9) hc16)) (shapeCast S16 (pair1_lt.sl.v2237_3 d L tab k r g1 g2 hR hin h9) hc16)) (shapeCast S16 (pair1_lt.sl.v1697_4 d L tab k r g1 g2 hR hin h9) hc16)) (shapeCast S16 (pair1_lt.sl.v1733_4 d L tab k r g1 g2 hR hin h9) hc16)) (shapeCast S16 (pair1_lt.sl.v1769_4 d L tab k r g1 g2 hR hin h9) hc16)) (shapeCast S16 (pair1_lt.sl.v1805_4 d L tab k r g1 g2 hR hin h9) hc16)) (shapeCast S16 (pair1_lt.sl.v1841_4 d L tab k r g1 g2 hR hin h9) hc16)) (shapeCast S16 (pair1_lt.sl.v1877_4 d L tab k r g1 g2 hR hin h9) hc16)) (shapeCast S16 (pair1_lt.sl.v1913_4 d L tab k r g1 g2 hR hin h9) hc16)) (shapeCast S16 (pair1_lt.sl.v1949_4 d L tab k r g1 g2 hR hin h9) hc16)) (shapeCast S16 (pair1_lt.sl.v1985_4 d L tab k r g1 g2 hR hin h9) hc16)) (shapeCast S16 (pair1_lt.sl.v2021_4 d L tab k r g1 g2 hR hin h9) hc16)) (shapeCast S16 (pair1_lt.sl.v2057_4 d L tab k r g1 g2 hR hin h9) hc16)) (shapeCast S16 (pair1_lt.sl.v2093_4 d L tab k r g1 g2 hR hin h9) hc16)) (shapeCast S16 (pair1_lt.sl.v2129_4 d L tab k r g1 g2 hR hin h9) hc16)) (shapeCast S16 (pair1_lt.sl.v2165_4 d L tab k r g1 g2 hR hin h9) hc16)) (shapeCast S16 (pair1_lt.sl.v2201_4 d L tab k r g1 g2 hR hin h9) hc16)) (shapeCast S16 (pair1_lt.sl.v2237_4 d L tab k r g1 g2 hR hin h9) hc16)) (shapeCast S16 (pair1_lt.sl.v1697_5 d L tab k r g1 g2 hR hin h9) hc16)) (shapeCast S16 (pair1_lt.sl.v1733_5 d L tab k r g1 g2 hR hin h9) hc16)) (shapeCast S16 (pair1_lt.sl.v1769_5 d L tab k r g1 g2 hR hin h9) hc16)) (shapeCast S16 (pair1_lt.sl.v1805_5 d L tab k r g1 g2 hR hin h9) hc16)) (shapeCast S16 (pair1_lt.sl.v1841_5 d L tab k r g1 g2 hR hin h9) hc16)) (shapeCast S16 (pair1_lt.sl.v1877_5 d L tab k r g1 g2 hR hin h9) hc16)) (shapeCast S16 (pair1_lt.sl.v1913_5 d L tab k r g1 g2 hR hin h9) hc16)) (shapeCast S16 (pair1_lt.sl.v1949_5 d L tab k r g1 g2 hR hin h9) hc16)) (shapeCast S16 (pair1_lt.sl.v1985_5 d L tab k r g1 g2 hR hin h9) hc16)) (shapeCast S16 (pair1_lt.sl.v2021_5 d L tab k r g1 g2 hR hin h9) hc16)) (shapeCast S16 (pair1_lt.sl.v2057_5 d L tab k r g1 g2 hR hin h9) hc16)) (shapeCast S16 (pair1_lt.sl.v2093_5 d L tab k r g1 g2 hR hin h9) hc16)) (shapeCast S16 (pair1_lt.sl.v2129_5 d L tab k r g1 g2 hR hin h9) hc16)) (shapeCast S16 (pair1_lt.sl.v2165_5 d L tab k r g1 g2 hR hin h9) hc16)) (shapeCast S16 (pair1_lt.sl.v2201_5 d L tab k r g1 g2 hR hin h9) hc16)) (shapeCast S16 (pair1_lt.sl.v2237_5 d L tab k r g1 g2 hR hin h9) hc16)) (shapeCast S16 (pair1_lt.sl.v1602 d L tab k r g1 g2 hR hin h9) hc16)) (shapeCast S16 (pair1_lt.sl.v1636 d L tab k r g1 g2 hR hin h9) hc16)) hc1 x = Spec.bagPartial fl tab (128 * (wL L).val + 16 * (2 * t1.val + 1) + (2 * k.val + 1)) (16 * 3 + (x 2).val) 50 := fun x => by
        rw [s_B3_0, s_B3_1, s_B3_2, s_B3_3, s_B3_4, s_B3_5, s_B3_6, s_B3_7, s_B3_8, s_B3_9, s_B3_10, s_B3_11, s_B3_12, s_B3_13, s_B3_14, s_B3_15, s_B3_16, s_B3_17, s_B3_18, s_B3_19, s_B3_20, s_B3_21, s_B3_22, s_B3_23, s_B3_24, s_B3_25, s_B3_26, s_B3_27, s_B3_28, s_B3_29, s_B3_30, s_B3_31, s_B3_32, s_B3_33, s_B3_34, s_B3_35, s_B3_36, s_B3_37, s_B3_38, s_B3_39, s_B3_40, s_B3_41, s_B3_42, s_B3_43, s_B3_44, s_B3_45, s_B3_46, s_B3_47, s_B3_48, s_B3_49]
        exact payload_ok fl tab (wL L).val (2 * t1.val + 1) (2 * k.val + 1) ⟨3, by decide⟩ hc1 x
      have hK0 := (WbV_iff_WbK d L fl tab (wL L).val (2 * t1.val + 1) 1 (2 * k.val) wb).mp hwb
      have kA := WbK_bag d L fl tab (wL L).val (2 * t1.val + 1) 1 _ wb hK0 ⟨2 * k.val, by omega⟩ (k1_off85 k) (k1_off86 k) (k1_off87 k) (k1_off88 k)
        (k1_off85_eq k) (k1_off86_eq k) (k1_off87_eq k) (k1_off88_eq k) (k1_off85_inb k) (k1_off86_inb k) (k1_off87_inb k) (k1_off88_inb k) _ _ _ _
        hP_A0 hP_A1 hP_A2 hP_A3
      have kB := WbK_bag d L fl tab (wL L).val (2 * t1.val + 1) 1 _ _ kA ⟨2 * k.val + 1, by omega⟩ (k1_off112 k) (k1_off113 k) (k1_off114 k) (k1_off115 k)
        (k1_off112_eq k) (k1_off113_eq k) (k1_off114_eq k) (k1_off115_eq k) (k1_off112_inb k) (k1_off113_inb k) (k1_off114_inb k) (k1_off115_inb k) _ _ _ _
        hP_B0 hP_B1 hP_B2 hP_B3
      rw [WbV_iff_WbK]
      intro g c hg
      have hg2 : g.val < 2 * (k.val + 1) := hg
      refine kB g c ?_
      have hg' : g.val < 2 * k.val ∨ g.val = 2 * k.val ∨ g.val = 2 * k.val + 1 := by omega
      rcases hg' with h | h | h
      · exact .inl (.inl h)
      · exact .inl (.inr (Fin.ext h))
      · exact .inr (Fin.ext h)

end Tile

end Cert.Proof.BagB
end
-- ==== Proof.TilePair1bB.lean ====
/-
  One trip of an odd block's pair loop on a vector subcore, the last trip (`k = 7`) of a block that is not the task's last (`t1 < 3`): from what holds before trip `k`
  to what holds before trip `k + 1`.

  The trip waits for the gather of bag `2 k` into slot 0, starts the gather of bag `2 k + 1` into slot 1 (its list in the second
  half of the row-number scratch), sums bag `2 k`'s fifty rows into row `2 k` of slot 1 of the write-back scratch, waits for the
  second gather, starts the gather of the NEXT block's first bag into slot 0 (its list at the first word of the row-number scratch: bag 16 of a block is bag 0 of the next), and sums bag `2 k + 1` into row `2 k + 1`. Each accumulator,
  fifty rows on, is the bag's partial sum of fifty terms at its sixteen columns: row by row, a sixteen-lane load of the
  gathered row at its column offset adds the row's term.
-/
import proofs.«203835_g19404662243951_cont_8to1_399_35_alg».proof.Proof.TilePreB
import proofs.«203835_g19404662243951_cont_8to1_399_35_alg».proof.Proof.PayB
import proofs.«203835_g19404662243951_cont_8to1_399_35_alg».proof.Proof.TileChkB
import proofs.«203835_g19404662243951_cont_8to1_399_35_alg».proof.Proof.TileMath
import proofs.«203835_g19404662243951_cont_8to1_399_35_alg».proof.Proof.TileInvB
import proofs.«203835_g19404662243951_cont_8to1_399_35_alg».proof.Proof.TileInv1B
import proofs.«203835_g19404662243951_cont_8to1_399_35_alg».proof.Proof.Gen.Kernel.Skeleton
import proofs.«203835_g19404662243951_cont_8to1_399_35_alg».proof.Proof.TilePairValB
import proofs.«203835_g19404662243951_cont_8to1_399_35_alg».proof.Proof.TileChk1B
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

set_option maxHeartbeats 0 in
theorem pair1_next (fl : IVec Spec.SFlat 32) (qt : PosShare TreeShare) (tab : FVec F Spec.STab .f32) (O : CellTallies nD τ sig (HIx 1))
    (W0 : Waits sig (HIx 1)) (t1 : Fin k1_t1_loop.trips) (v1407 : BitVec 32) (k : Fin k1_t5_loop.trips) (hk : ¬ k.val < 7) (ht : t1.val < 3) :
    invF d L fl qt tab O W0 (2 * t1.val + 1) k.val ⟨⟩
      ⊢ wp frame (wpE (defs₀ (F := F)) 𝒱₀ (thr d L) none) Set.univ
          (k1_t5_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10 t1 v1407 k ⟨⟩)
          (invF d L fl qt tab O W0 (2 * t1.val + 1) (k.val + 1)) := by
  unfold k1_t5_body
  unfold invF
  iintro ⟨#Hmw', %r, %g1, %g2, %wb, %o, %ho, ⟨%hT, %hR, %ho_eq, %hV⟩, Hg0, H1, Ht, H3, H2, H4, Hg1, %W', %hW', HO⟩
  have hin := hin_of d L g1 hT
  have h9 := cond9_ge k hk
  have h10 := cond10_ge_lt t1 k hk ht
  sl_exec_parts (disch := first | decide | (chk_disch1; exact hR _))
  sl_unroll
  sl_exec_parts (disch := first | decide | (chk_disch1; exact hR _))
  sl_unroll
  sl_exec_parts (disch := first | decide | (chk_disch1; exact hR _))
  sl_step
  have hoff : k1_off91 = lo1 (k.val + 1) := by rw [k1_off91_eq]; unfold lo1; rw [if_neg (by omega)]
  isplitl []; · iexact Hmw'
  iexists _; iexists g1; iexists g2; iexists _; iexists (k1_off91); iexists (k1_off91_inb t1 k h10)
  isplitr; rotate_left
  · isplitl [Hg0]; · iexact Hg0
    isplitl [H1]; · iexact H1
    isplitl [Ht]; · iexact Ht
    isplitl [H3]; · iexact H3
    isplitl [H2]; · iexact H2
    isplitl [H4]; · iexact H4
    isplitl [Hg1]; · iexact Hg1
    iexists (insert (SemLoc.dma cc1_scratch6.sem, (default : HIx 1)) (insert (SemLoc.dma cc1_scratch5.sem, (default : HIx 1)) W')); isplitr
    · ipureintro; intro p hp
      rcases Finset.mem_insert.mp hp with rfl | hp
      · exact .inr rfl
      rcases Finset.mem_insert.mp hp with rfl | hp
      · exact .inr rfl
      · exact hW' p hp
    · iexact HO
  · ipureintro
    refine ⟨hT, hR, hoff, ?_⟩
    obtain ⟨hT1, hR1, hnext, hrows, hwb⟩ := hV
    refine ⟨hT1, hR1, hnext, fun _ => ?_, ?_⟩
    · have hTn := (hnext (by omega)).1
      have hw := words_of_TixV d L fl (wL L).val (2 * t1.val + 1 + 1) 0 0 (by decide) (by decide) g1 hTn k1_off91
        (by rw [k1_off91_eq]; rfl)
      have hland := RowsV_landing0 d L fl tab (by decide) (wL L).val (2 * t1.val + 1 + 1) 0 g1 k1_off91 (k1_off91_inb t1 k h10) hw
        (hin _ _) (View.write (Elt F) (h1M).view r (pair1_next.sl.gather0 d L tab k g1 hin) Finset.univ)
      have h8 : k.val < 8 := lt_of_lt_of_eq k.isLt trips5
      have e : 2 * (k.val + 1) = 16 := by omega
      rw [e]
      intro j c
      rw [blkWord_next]
      exact hland j c
    · skip
      have h8 : k.val < 8 := lt_of_lt_of_eq k.isLt trips5
      have hc16 : S1x1x16.ShapeCasts S16 := by decide
      have hc1 : S16.ShapeCasts S1x1x16 := by decide
      have hRA : RowsV d L fl tab (wL L).val (2 * t1.val + 1) (2 * k.val) 0 (View.write (Elt F) (h1M).view r (pair1_next.sl.gather0 d L tab k g1 hin) Finset.univ) :=
        RowsV_keep0 d L fl tab (wL L).val (2 * t1.val + 1) (2 * k.val) r _ (hrows (Or.inl h8))
      have hwB := words_of_TixV d L fl (wL L).val (2 * t1.val + 1) 1 (2 * k.val + 1) (by decide) (by omega) g1 hT1 (k1_off64 k)
        (by rw [k1_off64_eq]; show 128 * k.val + 1088 = 1024 * 1 + 64 * (2 * k.val + 1); omega)
      have hRB1 : RowsV d L fl tab (wL L).val (2 * t1.val + 1) (2 * k.val + 1) 1 (View.write (Elt F) (h1M).view r (pair1_next.sl.gather0 d L tab k g1 hin) Finset.univ) :=
        RowsV_landing1 d L fl tab (by decide) (wL L).val (2 * t1.val + 1) (2 * k.val + 1) g1 (k1_off64 k) (k1_off64_inb k) hwB (hin _ _) r
      have hRB : RowsV d L fl tab (wL L).val (2 * t1.val + 1) (2 * k.val + 1) 1 (View.write (Elt F) (h0M).view (View.write (Elt F) (h1M).view r (pair1_next.sl.gather0 d L tab k g1 hin) Finset.univ) (pair1_next.sl.gather212 d L tab t1 k g1 hin h10) Finset.univ) :=
        RowsV_keep1 d L fl tab (wL L).val (2 * t1.val + 1) (2 * k.val + 1) _ _ hRB1
      have hw_v1667 : pair1_next.sl.v1667 d L k g2 = Spec.tcol (blkWord fl (wL L).val (2 * t1.val + 1) (64 * (2 * k.val) + 0)) := by
        refine (rv_extract d L g2 (k1_off65 k ⟨0, by decide⟩) (k1_off65_inb k ⟨0, by decide⟩) (by decide) 0 (by decide) (by decide) (by decide)).trans ?_
        exact rv_word d L fl (wL L).val (2 * t1.val + 1) 1 (2 * k.val) 0 (by decide) (by omega) (by decide) g2 hR1 _
          (by rw [k1_off65_eq]; show 128 * k.val + 16 * 0 + 1024 + 0 = 1024 * 1 + 64 * (2 * k.val) + 0; omega) _
      have hw_v1703 : pair1_next.sl.v1703 d L k g2 = Spec.tcol (blkWord fl (wL L).val (2 * t1.val + 1) (64 * (2 * k.val) + 1)) := by
        refine (rv_extract d L g2 (k1_off65 k ⟨0, by decide⟩) (k1_off65_inb k ⟨0, by decide⟩) (by decide) 1 (by decide) (by decide) (by decide)).trans ?_
        exact rv_word d L fl (wL L).val (2 * t1.val + 1) 1 (2 * k.val) 1 (by decide) (by omega) (by decide) g2 hR1 _
          (by rw [k1_off65_eq]; show 128 * k.val + 16 * 0 + 1024 + 1 = 1024 * 1 + 64 * (2 * k.val) + 1; omega) _
      have hw_v1739 : pair1_next.sl.v1739 d L k g2 = Spec.tcol (blkWord fl (wL L).val (2 * t1.val + 1) (64 * (2 * k.val) + 2)) := by
        refine (rv_extract d L g2 (k1_off65 k ⟨0, by decide⟩) (k1_off65_inb k ⟨0, by decide⟩) (by decide) 2 (by decide) (by decide) (by decide)).trans ?_
        exact rv_word d L fl (wL L).val (2 * t1.val + 1) 1 (2 * k.val) 2 (by decide) (by omega) (by decide) g2 hR1 _
          (by rw [k1_off65_eq]; show 128 * k.val + 16 * 0 + 1024 + 2 = 1024 * 1 + 64 * (2 * k.val) + 2; omega) _
      have hw_v1775 : pair1_next.sl.v1775 d L k g2 = Spec.tcol (blkWord fl (wL L).val (2 * t1.val + 1) (64 * (2 * k.val) + 3)) := by
        refine (rv_extract d L g2 (k1_off65 k ⟨0, by decide⟩) (k1_off65_inb k ⟨0, by decide⟩) (by decide) 3 (by decide) (by decide) (by decide)).trans ?_
        exact rv_word d L fl (wL L).val (2 * t1.val + 1) 1 (2 * k.val) 3 (by decide) (by omega) (by decide) g2 hR1 _
          (by rw [k1_off65_eq]; show 128 * k.val + 16 * 0 + 1024 + 3 = 1024 * 1 + 64 * (2 * k.val) + 3; omega) _
      have hw_v1811 : pair1_next.sl.v1811 d L k g2 = Spec.tcol (blkWord fl (wL L).val (2 * t1.val + 1) (64 * (2 * k.val) + 4)) := by
        refine (rv_extract d L g2 (k1_off65 k ⟨0, by decide⟩) (k1_off65_inb k ⟨0, by decide⟩) (by decide) 4 (by decide) (by decide) (by decide)).trans ?_
        exact rv_word d L fl (wL L).val (2 * t1.val + 1) 1 (2 * k.val) 4 (by decide) (by omega) (by decide) g2 hR1 _
          (by rw [k1_off65_eq]; show 128 * k.val + 16 * 0 + 1024 + 4 = 1024 * 1 + 64 * (2 * k.val) + 4; omega) _
      have hw_v1847 : pair1_next.sl.v1847 d L k g2 = Spec.tcol (blkWord fl (wL L).val (2 * t1.val + 1) (64 * (2 * k.val) + 5)) := by
        refine (rv_extract d L g2 (k1_off65 k ⟨0, by decide⟩) (k1_off65_inb k ⟨0, by decide⟩) (by decide) 5 (by decide) (by decide) (by decide)).trans ?_
        exact rv_word d L fl (wL L).val (2 * t1.val + 1) 1 (2 * k.val) 5 (by decide) (by omega) (by decide) g2 hR1 _
          (by rw [k1_off65_eq]; show 128 * k.val + 16 * 0 + 1024 + 5 = 1024 * 1 + 64 * (2 * k.val) + 5; omega) _
      have hw_v1883 : pair1_next.sl.v1883 d L k g2 = Spec.tcol (blkWord fl (wL L).val (2 * t1.val + 1) (64 * (2 * k.val) + 6)) := by
        refine (rv_extract d L g2 (k1_off65 k ⟨0, by decide⟩) (k1_off65_inb k ⟨0, by decide⟩) (by decide) 6 (by decide) (by decide) (by decide)).trans ?_
        exact rv_word d L fl (wL L).val (2 * t1.val + 1) 1 (2 * k.val) 6 (by decide) (by omega) (by decide) g2 hR1 _
          (by rw [k1_off65_eq]; show 128 * k.val + 16 * 0 + 1024 + 6 = 1024 * 1 + 64 * (2 * k.val) + 6; omega) _
      have hw_v1919 : pair1_next.sl.v1919 d L k g2 = Spec.tcol (blkWord fl (wL L).val (2 * t1.val + 1) (64 * (2 * k.val) + 7)) := by
        refine (rv_extract d L g2 (k1_off65 k ⟨0, by decide⟩) (k1_off65_inb k ⟨0, by decide⟩) (by decide) 7 (by decide) (by decide) (by decide)).trans ?_
        exact rv_word d L fl (wL L).val (2 * t1.val + 1) 1 (2 * k.val) 7 (by decide) (by omega) (by decide) g2 hR1 _
          (by rw [k1_off65_eq]; show 128 * k.val + 16 * 0 + 1024 + 7 = 1024 * 1 + 64 * (2 * k.val) + 7; omega) _
      have hw_v1955 : pair1_next.sl.v1955 d L k g2 = Spec.tcol (blkWord fl (wL L).val (2 * t1.val + 1) (64 * (2 * k.val) + 8)) := by
        refine (rv_extract d L g2 (k1_off65 k ⟨0, by decide⟩) (k1_off65_inb k ⟨0, by decide⟩) (by decide) 8 (by decide) (by decide) (by decide)).trans ?_
        exact rv_word d L fl (wL L).val (2 * t1.val + 1) 1 (2 * k.val) 8 (by decide) (by omega) (by decide) g2 hR1 _
          (by rw [k1_off65_eq]; show 128 * k.val + 16 * 0 + 1024 + 8 = 1024 * 1 + 64 * (2 * k.val) + 8; omega) _
      have hw_v1991 : pair1_next.sl.v1991 d L k g2 = Spec.tcol (blkWord fl (wL L).val (2 * t1.val + 1) (64 * (2 * k.val) + 9)) := by
        refine (rv_extract d L g2 (k1_off65 k ⟨0, by decide⟩) (k1_off65_inb k ⟨0, by decide⟩) (by decide) 9 (by decide) (by decide) (by decide)).trans ?_
        exact rv_word d L fl (wL L).val (2 * t1.val + 1) 1 (2 * k.val) 9 (by decide) (by omega) (by decide) g2 hR1 _
          (by rw [k1_off65_eq]; show 128 * k.val + 16 * 0 + 1024 + 9 = 1024 * 1 + 64 * (2 * k.val) + 9; omega) _
      have hw_v2027 : pair1_next.sl.v2027 d L k g2 = Spec.tcol (blkWord fl (wL L).val (2 * t1.val + 1) (64 * (2 * k.val) + 10)) := by
        refine (rv_extract d L g2 (k1_off65 k ⟨0, by decide⟩) (k1_off65_inb k ⟨0, by decide⟩) (by decide) 10 (by decide) (by decide) (by decide)).trans ?_
        exact rv_word d L fl (wL L).val (2 * t1.val + 1) 1 (2 * k.val) 10 (by decide) (by omega) (by decide) g2 hR1 _
          (by rw [k1_off65_eq]; show 128 * k.val + 16 * 0 + 1024 + 10 = 1024 * 1 + 64 * (2 * k.val) + 10; omega) _
      have hw_v2063 : pair1_next.sl.v2063 d L k g2 = Spec.tcol (blkWord fl (wL L).val (2 * t1.val + 1) (64 * (2 * k.val) + 11)) := by
        refine (rv_extract d L g2 (k1_off65 k ⟨0, by decide⟩) (k1_off65_inb k ⟨0, by decide⟩) (by decide) 11 (by decide) (by decide) (by decide)).trans ?_
        exact rv_word d L fl (wL L).val (2 * t1.val + 1) 1 (2 * k.val) 11 (by decide) (by omega) (by decide) g2 hR1 _
          (by rw [k1_off65_eq]; show 128 * k.val + 16 * 0 + 1024 + 11 = 1024 * 1 + 64 * (2 * k.val) + 11; omega) _
      have hw_v2099 : pair1_next.sl.v2099 d L k g2 = Spec.tcol (blkWord fl (wL L).val (2 * t1.val + 1) (64 * (2 * k.val) + 12)) := by
        refine (rv_extract d L g2 (k1_off65 k ⟨0, by decide⟩) (k1_off65_inb k ⟨0, by decide⟩) (by decide) 12 (by decide) (by decide) (by decide)).trans ?_
        exact rv_word d L fl (wL L).val (2 * t1.val + 1) 1 (2 * k.val) 12 (by decide) (by omega) (by decide) g2 hR1 _
          (by rw [k1_off65_eq]; show 128 * k.val + 16 * 0 + 1024 + 12 = 1024 * 1 + 64 * (2 * k.val) + 12; omega) _
      have hw_v2135 : pair1_next.sl.v2135 d L k g2 = Spec.tcol (blkWord fl (wL L).val (2 * t1.val + 1) (64 * (2 * k.val) + 13)) := by
        refine (rv_extract d L g2 (k1_off65 k ⟨0, by decide⟩) (k1_off65_inb k ⟨0, by decide⟩) (by decide) 13 (by decide) (by decide) (by decide)).trans ?_
        exact rv_word d L fl (wL L).val (2 * t1.val + 1) 1 (2 * k.val) 13 (by decide) (by omega) (by decide) g2 hR1 _
          (by rw [k1_off65_eq]; show 128 * k.val + 16 * 0 + 1024 + 13 = 1024 * 1 + 64 * (2 * k.val) + 13; omega) _
      have hw_v2171 : pair1_next.sl.v2171 d L k g2 = Spec.tcol (blkWord fl (wL L).val (2 * t1.val + 1) (64 * (2 * k.val) + 14)) := by
        refine (rv_extract d L g2 (k1_off65 k ⟨0, by decide⟩) (k1_off65_inb k ⟨0, by decide⟩) (by decide) 14 (by decide) (by decide) (by decide)).trans ?_
        exact rv_word d L fl (wL L).val (2 * t1.val + 1) 1 (2 * k.val) 14 (by decide) (by omega) (by decide) g2 hR1 _
          (by rw [k1_off65_eq]; show 128 * k.val + 16 * 0 + 1024 + 14 = 1024 * 1 + 64 * (2 * k.val) + 14; omega) _
      have hw_v2207 : pair1_next.sl.v2207 d L k g2 = Spec.tcol (blkWord fl (wL L).val (2 * t1.val + 1) (64 * (2 * k.val) + 15)) := by
        refine (rv_extract d L g2 (k1_off65 k ⟨0, by decide⟩) (k1_off65_inb k ⟨0, by decide⟩) (by decide) 15 (by decide) (by decide) (by decide)).trans ?_
        exact rv_word d L fl (wL L).val (2 * t1.val + 1) 1 (2 * k.val) 15 (by decide) (by omega) (by decide) g2 hR1 _
          (by rw [k1_off65_eq]; show 128 * k.val + 16 * 0 + 1024 + 15 = 1024 * 1 + 64 * (2 * k.val) + 15; omega) _
      have hw_v1667_1 : pair1_next.sl.v1667_1 d L k g2 = Spec.tcol (blkWord fl (wL L).val (2 * t1.val + 1) (64 * (2 * k.val) + 16)) := by
        refine (rv_extract d L g2 (k1_off65 k ⟨1, by decide⟩) (k1_off65_inb k ⟨1, by decide⟩) (by decide) 0 (by decide) (by decide) (by decide)).trans ?_
        exact rv_word d L fl (wL L).val (2 * t1.val + 1) 1 (2 * k.val) 16 (by decide) (by omega) (by decide) g2 hR1 _
          (by rw [k1_off65_eq]; show 128 * k.val + 16 * 1 + 1024 + 0 = 1024 * 1 + 64 * (2 * k.val) + 16; omega) _
      have hw_v1703_1 : pair1_next.sl.v1703_1 d L k g2 = Spec.tcol (blkWord fl (wL L).val (2 * t1.val + 1) (64 * (2 * k.val) + 17)) := by
        refine (rv_extract d L g2 (k1_off65 k ⟨1, by decide⟩) (k1_off65_inb k ⟨1, by decide⟩) (by decide) 1 (by decide) (by decide) (by decide)).trans ?_
        exact rv_word d L fl (wL L).val (2 * t1.val + 1) 1 (2 * k.val) 17 (by decide) (by omega) (by decide) g2 hR1 _
          (by rw [k1_off65_eq]; show 128 * k.val + 16 * 1 + 1024 + 1 = 1024 * 1 + 64 * (2 * k.val) + 17; omega) _
      have hw_v1739_1 : pair1_next.sl.v1739_1 d L k g2 = Spec.tcol (blkWord fl (wL L).val (2 * t1.val + 1) (64 * (2 * k.val) + 18)) := by
        refine (rv_extract d L g2 (k1_off65 k ⟨1, by decide⟩) (k1_off65_inb k ⟨1, by decide⟩) (by decide) 2 (by decide) (by decide) (by decide)).trans ?_
        exact rv_word d L fl (wL L).val (2 * t1.val + 1) 1 (2 * k.val) 18 (by decide) (by omega) (by decide) g2 hR1 _
          (by rw [k1_off65_eq]; show 128 * k.val + 16 * 1 + 1024 + 2 = 1024 * 1 + 64 * (2 * k.val) + 18; omega) _
      have hw_v1775_1 : pair1_next.sl.v1775_1 d L k g2 = Spec.tcol (blkWord fl (wL L).val (2 * t1.val + 1) (64 * (2 * k.val) + 19)) := by
        refine (rv_extract d L g2 (k1_off65 k ⟨1, by decide⟩) (k1_off65_inb k ⟨1, by decide⟩) (by decide) 3 (by decide) (by decide) (by decide)).trans ?_
        exact rv_word d L fl (wL L).val (2 * t1.val + 1) 1 (2 * k.val) 19 (by decide) (by omega) (by decide) g2 hR1 _
          (by rw [k1_off65_eq]; show 128 * k.val + 16 * 1 + 1024 + 3 = 1024 * 1 + 64 * (2 * k.val) + 19; omega) _
      have hw_v1811_1 : pair1_next.sl.v1811_1 d L k g2 = Spec.tcol (blkWord fl (wL L).val (2 * t1.val + 1) (64 * (2 * k.val) + 20)) := by
        refine (rv_extract d L g2 (k1_off65 k ⟨1, by decide⟩) (k1_off65_inb k ⟨1, by decide⟩) (by decide) 4 (by decide) (by decide) (by decide)).trans ?_
        exact rv_word d L fl (wL L).val (2 * t1.val + 1) 1 (2 * k.val) 20 (by decide) (by omega) (by decide) g2 hR1 _
          (by rw [k1_off65_eq]; show 128 * k.val + 16 * 1 + 1024 + 4 = 1024 * 1 + 64 * (2 * k.val) + 20; omega) _
      have hw_v1847_1 : pair1_next.sl.v1847_1 d L k g2 = Spec.tcol (blkWord fl (wL L).val (2 * t1.val + 1) (64 * (2 * k.val) + 21)) := by
        refine (rv_extract d L g2 (k1_off65 k ⟨1, by decide⟩) (k1_off65_inb k ⟨1, by decide⟩) (by decide) 5 (by decide) (by decide) (by decide)).trans ?_
        exact rv_word d L fl (wL L).val (2 * t1.val + 1) 1 (2 * k.val) 21 (by decide) (by omega) (by decide) g2 hR1 _
          (by rw [k1_off65_eq]; show 128 * k.val + 16 * 1 + 1024 + 5 = 1024 * 1 + 64 * (2 * k.val) + 21; omega) _
      have hw_v1883_1 : pair1_next.sl.v1883_1 d L k g2 = Spec.tcol (blkWord fl (wL L).val (2 * t1.val + 1) (64 * (2 * k.val) + 22)) := by
        refine (rv_extract d L g2 (k1_off65 k ⟨1, by decide⟩) (k1_off65_inb k ⟨1, by decide⟩) (by decide) 6 (by decide) (by decide) (by decide)).trans ?_
        exact rv_word d L fl (wL L).val (2 * t1.val + 1) 1 (2 * k.val) 22 (by decide) (by omega) (by decide) g2 hR1 _
          (by rw [k1_off65_eq]; show 128 * k.val + 16 * 1 + 1024 + 6 = 1024 * 1 + 64 * (2 * k.val) + 22; omega) _
      have hw_v1919_1 : pair1_next.sl.v1919_1 d L k g2 = Spec.tcol (blkWord fl (wL L).val (2 * t1.val + 1) (64 * (2 * k.val) + 23)) := by
        refine (rv_extract d L g2 (k1_off65 k ⟨1, by decide⟩) (k1_off65_inb k ⟨1, by decide⟩) (by decide) 7 (by decide) (by decide) (by decide)).trans ?_
        exact rv_word d L fl (wL L).val (2 * t1.val + 1) 1 (2 * k.val) 23 (by decide) (by omega) (by decide) g2 hR1 _
          (by rw [k1_off65_eq]; show 128 * k.val + 16 * 1 + 1024 + 7 = 1024 * 1 + 64 * (2 * k.val) + 23; omega) _
      have hw_v1955_1 : pair1_next.sl.v1955_1 d L k g2 = Spec.tcol (blkWord fl (wL L).val (2 * t1.val + 1) (64 * (2 * k.val) + 24)) := by
        refine (rv_extract d L g2 (k1_off65 k ⟨1, by decide⟩) (k1_off65_inb k ⟨1, by decide⟩) (by decide) 8 (by decide) (by decide) (by decide)).trans ?_
        exact rv_word d L fl (wL L).val (2 * t1.val + 1) 1 (2 * k.val) 24 (by decide) (by omega) (by decide) g2 hR1 _
          (by rw [k1_off65_eq]; show 128 * k.val + 16 * 1 + 1024 + 8 = 1024 * 1 + 64 * (2 * k.val) + 24; omega) _
      have hw_v1991_1 : pair1_next.sl.v1991_1 d L k g2 = Spec.tcol (blkWord fl (wL L).val (2 * t1.val + 1) (64 * (2 * k.val) + 25)) := by
        refine (rv_extract d L g2 (k1_off65 k ⟨1, by decide⟩) (k1_off65_inb k ⟨1, by decide⟩) (by decide) 9 (by decide) (by decide) (by decide)).trans ?_
        exact rv_word d L fl (wL L).val (2 * t1.val + 1) 1 (2 * k.val) 25 (by decide) (by omega) (by decide) g2 hR1 _
          (by rw [k1_off65_eq]; show 128 * k.val + 16 * 1 + 1024 + 9 = 1024 * 1 + 64 * (2 * k.val) + 25; omega) _
      have hw_v2027_1 : pair1_next.sl.v2027_1 d L k g2 = Spec.tcol (blkWord fl (wL L).val (2 * t1.val + 1) (64 * (2 * k.val) + 26)) := by
        refine (rv_extract d L g2 (k1_off65 k ⟨1, by decide⟩) (k1_off65_inb k ⟨1, by decide⟩) (by decide) 10 (by decide) (by decide) (by decide)).trans ?_
        exact rv_word d L fl (wL L).val (2 * t1.val + 1) 1 (2 * k.val) 26 (by decide) (by omega) (by decide) g2 hR1 _
          (by rw [k1_off65_eq]; show 128 * k.val + 16 * 1 + 1024 + 10 = 1024 * 1 + 64 * (2 * k.val) + 26; omega) _
      have hw_v2063_1 : pair1_next.sl.v2063_1 d L k g2 = Spec.tcol (blkWord fl (wL L).val (2 * t1.val + 1) (64 * (2 * k.val) + 27)) := by
        refine (rv_extract d L g2 (k1_off65 k ⟨1, by decide⟩) (k1_off65_inb k ⟨1, by decide⟩) (by decide) 11 (by decide) (by decide) (by decide)).trans ?_
        exact rv_word d L fl (wL L).val (2 * t1.val + 1) 1 (2 * k.val) 27 (by decide) (by omega) (by decide) g2 hR1 _
          (by rw [k1_off65_eq]; show 128 * k.val + 16 * 1 + 1024 + 11 = 1024 * 1 + 64 * (2 * k.val) + 27; omega) _
      have hw_v2099_1 : pair1_next.sl.v2099_1 d L k g2 = Spec.tcol (blkWord fl (wL L).val (2 * t1.val + 1) (64 * (2 * k.val) + 28)) := by
        refine (rv_extract d L g2 (k1_off65 k ⟨1, by decide⟩) (k1_off65_inb k ⟨1, by decide⟩) (by decide) 12 (by decide) (by decide) (by decide)).trans ?_
        exact rv_word d L fl (wL L).val (2 * t1.val + 1) 1 (2 * k.val) 28 (by decide) (by omega) (by decide) g2 hR1 _
          (by rw [k1_off65_eq]; show 128 * k.val + 16 * 1 + 1024 + 12 = 1024 * 1 + 64 * (2 * k.val) + 28; omega) _
      have hw_v2135_1 : pair1_next.sl.v2135_1 d L k g2 = Spec.tcol (blkWord fl (wL L).val (2 * t1.val + 1) (64 * (2 * k.val) + 29)) := by
        refine (rv_extract d L g2 (k1_off65 k ⟨1, by decide⟩) (k1_off65_inb k ⟨1, by decide⟩) (by decide) 13 (by decide) (by decide) (by decide)).trans ?_
        exact rv_word d L fl (wL L).val (2 * t1.val + 1) 1 (2 * k.val) 29 (by decide) (by omega) (by decide) g2 hR1 _
          (by rw [k1_off65_eq]; show 128 * k.val + 16 * 1 + 1024 + 13 = 1024 * 1 + 64 * (2 * k.val) + 29; omega) _
      have hw_v2171_1 : pair1_next.sl.v2171_1 d L k g2 = Spec.tcol (blkWord fl (wL L).val (2 * t1.val + 1) (64 * (2 * k.val) + 30)) := by
        refine (rv_extract d L g2 (k1_off65 k ⟨1, by decide⟩) (k1_off65_inb k ⟨1, by decide⟩) (by decide) 14 (by decide) (by decide) (by decide)).trans ?_
        exact rv_word d L fl (wL L).val (2 * t1.val + 1) 1 (2 * k.val) 30 (by decide) (by omega) (by decide) g2 hR1 _
          (by rw [k1_off65_eq]; show 128 * k.val + 16 * 1 + 1024 + 14 = 1024 * 1 + 64 * (2 * k.val) + 30; omega) _
      have hw_v2207_1 : pair1_next.sl.v2207_1 d L k g2 = Spec.tcol (blkWord fl (wL L).val (2 * t1.val + 1) (64 * (2 * k.val) + 31)) := by
        refine (rv_extract d L g2 (k1_off65 k ⟨1, by decide⟩) (k1_off65_inb k ⟨1, by decide⟩) (by decide) 15 (by decide) (by decide) (by decide)).trans ?_
        exact rv_word d L fl (wL L).val (2 * t1.val + 1) 1 (2 * k.val) 31 (by decide) (by omega) (by decide) g2 hR1 _
          (by rw [k1_off65_eq]; show 128 * k.val + 16 * 1 + 1024 + 15 = 1024 * 1 + 64 * (2 * k.val) + 31; omega) _
      have hw_v1667_2 : pair1_next.sl.v1667_2 d L k g2 = Spec.tcol (blkWord fl (wL L).val (2 * t1.val + 1) (64 * (2 * k.val) + 32)) := by
        refine (rv_extract d L g2 (k1_off65 k ⟨2, by decide⟩) (k1_off65_inb k ⟨2, by decide⟩) (by decide) 0 (by decide) (by decide) (by decide)).trans ?_
        exact rv_word d L fl (wL L).val (2 * t1.val + 1) 1 (2 * k.val) 32 (by decide) (by omega) (by decide) g2 hR1 _
          (by rw [k1_off65_eq]; show 128 * k.val + 16 * 2 + 1024 + 0 = 1024 * 1 + 64 * (2 * k.val) + 32; omega) _
      have hw_v1703_2 : pair1_next.sl.v1703_2 d L k g2 = Spec.tcol (blkWord fl (wL L).val (2 * t1.val + 1) (64 * (2 * k.val) + 33)) := by
        refine (rv_extract d L g2 (k1_off65 k ⟨2, by decide⟩) (k1_off65_inb k ⟨2, by decide⟩) (by decide) 1 (by decide) (by decide) (by decide)).trans ?_
        exact rv_word d L fl (wL L).val (2 * t1.val + 1) 1 (2 * k.val) 33 (by decide) (by omega) (by decide) g2 hR1 _
          (by rw [k1_off65_eq]; show 128 * k.val + 16 * 2 + 1024 + 1 = 1024 * 1 + 64 * (2 * k.val) + 33; omega) _
      have hw_v1739_2 : pair1_next.sl.v1739_2 d L k g2 = Spec.tcol (blkWord fl (wL L).val (2 * t1.val + 1) (64 * (2 * k.val) + 34)) := by
        refine (rv_extract d L g2 (k1_off65 k ⟨2, by decide⟩) (k1_off65_inb k ⟨2, by decide⟩) (by decide) 2 (by decide) (by decide) (by decide)).trans ?_
        exact rv_word d L fl (wL L).val (2 * t1.val + 1) 1 (2 * k.val) 34 (by decide) (by omega) (by decide) g2 hR1 _
          (by rw [k1_off65_eq]; show 128 * k.val + 16 * 2 + 1024 + 2 = 1024 * 1 + 64 * (2 * k.val) + 34; omega) _
      have hw_v1775_2 : pair1_next.sl.v1775_2 d L k g2 = Spec.tcol (blkWord fl (wL L).val (2 * t1.val + 1) (64 * (2 * k.val) + 35)) := by
        refine (rv_extract d L g2 (k1_off65 k ⟨2, by decide⟩) (k1_off65_inb k ⟨2, by decide⟩) (by decide) 3 (by decide) (by decide) (by decide)).trans ?_
        exact rv_word d L fl (wL L).val (2 * t1.val + 1) 1 (2 * k.val) 35 (by decide) (by omega) (by decide) g2 hR1 _
          (by rw [k1_off65_eq]; show 128 * k.val + 16 * 2 + 1024 + 3 = 1024 * 1 + 64 * (2 * k.val) + 35; omega) _
      have hw_v1811_2 : pair1_next.sl.v1811_2 d L k g2 = Spec.tcol (blkWord fl (wL L).val (2 * t1.val + 1) (64 * (2 * k.val) + 36)) := by
        refine (rv_extract d L g2 (k1_off65 k ⟨2, by decide⟩) (k1_off65_inb k ⟨2, by decide⟩) (by decide) 4 (by decide) (by decide) (by decide)).trans ?_
        exact rv_word d L fl (wL L).val (2 * t1.val + 1) 1 (2 * k.val) 36 (by decide) (by omega) (by decide) g2 hR1 _
          (by rw [k1_off65_eq]; show 128 * k.val + 16 * 2 + 1024 + 4 = 1024 * 1 + 64 * (2 * k.val) + 36; omega) _
      have hw_v1847_2 : pair1_next.sl.v1847_2 d L k g2 = Spec.tcol (blkWord fl (wL L).val (2 * t1.val + 1) (64 * (2 * k.val) + 37)) := by
        refine (rv_extract d L g2 (k1_off65 k ⟨2, by decide⟩) (k1_off65_inb k ⟨2, by decide⟩) (by decide) 5 (by decide) (by decide) (by decide)).trans ?_
        exact rv_word d L fl (wL L).val (2 * t1.val + 1) 1 (2 * k.val) 37 (by decide) (by omega) (by decide) g2 hR1 _
          (by rw [k1_off65_eq]; show 128 * k.val + 16 * 2 + 1024 + 5 = 1024 * 1 + 64 * (2 * k.val) + 37; omega) _
      have hw_v1883_2 : pair1_next.sl.v1883_2 d L k g2 = Spec.tcol (blkWord fl (wL L).val (2 * t1.val + 1) (64 * (2 * k.val) + 38)) := by
        refine (rv_extract d L g2 (k1_off65 k ⟨2, by decide⟩) (k1_off65_inb k ⟨2, by decide⟩) (by decide) 6 (by decide) (by decide) (by decide)).trans ?_
        exact rv_word d L fl (wL L).val (2 * t1.val + 1) 1 (2 * k.val) 38 (by decide) (by omega) (by decide) g2 hR1 _
          (by rw [k1_off65_eq]; show 128 * k.val + 16 * 2 + 1024 + 6 = 1024 * 1 + 64 * (2 * k.val) + 38; omega) _
      have hw_v1919_2 : pair1_next.sl.v1919_2 d L k g2 = Spec.tcol (blkWord fl (wL L).val (2 * t1.val + 1) (64 * (2 * k.val) + 39)) := by
        refine (rv_extract d L g2 (k1_off65 k ⟨2, by decide⟩) (k1_off65_inb k ⟨2, by decide⟩) (by decide) 7 (by decide) (by decide) (by decide)).trans ?_
        exact rv_word d L fl (wL L).val (2 * t1.val + 1) 1 (2 * k.val) 39 (by decide) (by omega) (by decide) g2 hR1 _
          (by rw [k1_off65_eq]; show 128 * k.val + 16 * 2 + 1024 + 7 = 1024 * 1 + 64 * (2 * k.val) + 39; omega) _
      have hw_v1955_2 : pair1_next.sl.v1955_2 d L k g2 = Spec.tcol (blkWord fl (wL L).val (2 * t1.val + 1) (64 * (2 * k.val) + 40)) := by
        refine (rv_extract d L g2 (k1_off65 k ⟨2, by decide⟩) (k1_off65_inb k ⟨2, by decide⟩) (by decide) 8 (by decide) (by decide) (by decide)).trans ?_
        exact rv_word d L fl (wL L).val (2 * t1.val + 1) 1 (2 * k.val) 40 (by decide) (by omega) (by decide) g2 hR1 _
          (by rw [k1_off65_eq]; show 128 * k.val + 16 * 2 + 1024 + 8 = 1024 * 1 + 64 * (2 * k.val) + 40; omega) _
      have hw_v1991_2 : pair1_next.sl.v1991_2 d L k g2 = Spec.tcol (blkWord fl (wL L).val (2 * t1.val + 1) (64 * (2 * k.val) + 41)) := by
        refine (rv_extract d L g2 (k1_off65 k ⟨2, by decide⟩) (k1_off65_inb k ⟨2, by decide⟩) (by decide) 9 (by decide) (by decide) (by decide)).trans ?_
        exact rv_word d L fl (wL L).val (2 * t1.val + 1) 1 (2 * k.val) 41 (by decide) (by omega) (by decide) g2 hR1 _
          (by rw [k1_off65_eq]; show 128 * k.val + 16 * 2 + 1024 + 9 = 1024 * 1 + 64 * (2 * k.val) + 41; omega) _
      have hw_v2027_2 : pair1_next.sl.v2027_2 d L k g2 = Spec.tcol (blkWord fl (wL L).val (2 * t1.val + 1) (64 * (2 * k.val) + 42)) := by
        refine (rv_extract d L g2 (k1_off65 k ⟨2, by decide⟩) (k1_off65_inb k ⟨2, by decide⟩) (by decide) 10 (by decide) (by decide) (by decide)).trans ?_
        exact rv_word d L fl (wL L).val (2 * t1.val + 1) 1 (2 * k.val) 42 (by decide) (by omega) (by decide) g2 hR1 _
          (by rw [k1_off65_eq]; show 128 * k.val + 16 * 2 + 1024 + 10 = 1024 * 1 + 64 * (2 * k.val) + 42; omega) _
      have hw_v2063_2 : pair1_next.sl.v2063_2 d L k g2 = Spec.tcol (blkWord fl (wL L).val (2 * t1.val + 1) (64 * (2 * k.val) + 43)) := by
        refine (rv_extract d L g2 (k1_off65 k ⟨2, by decide⟩) (k1_off65_inb k ⟨2, by decide⟩) (by decide) 11 (by decide) (by decide) (by decide)).trans ?_
        exact rv_word d L fl (wL L).val (2 * t1.val + 1) 1 (2 * k.val) 43 (by decide) (by omega) (by decide) g2 hR1 _
          (by rw [k1_off65_eq]; show 128 * k.val + 16 * 2 + 1024 + 11 = 1024 * 1 + 64 * (2 * k.val) + 43; omega) _
      have hw_v2099_2 : pair1_next.sl.v2099_2 d L k g2 = Spec.tcol (blkWord fl (wL L).val (2 * t1.val + 1) (64 * (2 * k.val) + 44)) := by
        refine (rv_extract d L g2 (k1_off65 k ⟨2, by decide⟩) (k1_off65_inb k ⟨2, by decide⟩) (by decide) 12 (by decide) (by decide) (by decide)).trans ?_
        exact rv_word d L fl (wL L).val (2 * t1.val + 1) 1 (2 * k.val) 44 (by decide) (by omega) (by decide) g2 hR1 _
          (by rw [k1_off65_eq]; show 128 * k.val + 16 * 2 + 1024 + 12 = 1024 * 1 + 64 * (2 * k.val) + 44; omega) _
      have hw_v2135_2 : pair1_next.sl.v2135_2 d L k g2 = Spec.tcol (blkWord fl (wL L).val (2 * t1.val + 1) (64 * (2 * k.val) + 45)) := by
        refine (rv_extract d L g2 (k1_off65 k ⟨2, by decide⟩) (k1_off65_inb k ⟨2, by decide⟩) (by decide) 13 (by decide) (by decide) (by decide)).trans ?_
        exact rv_word d L fl (wL L).val (2 * t1.val + 1) 1 (2 * k.val) 45 (by decide) (by omega) (by decide) g2 hR1 _
          (by rw [k1_off65_eq]; show 128 * k.val + 16 * 2 + 1024 + 13 = 1024 * 1 + 64 * (2 * k.val) + 45; omega) _
      have hw_v2171_2 : pair1_next.sl.v2171_2 d L k g2 = Spec.tcol (blkWord fl (wL L).val (2 * t1.val + 1) (64 * (2 * k.val) + 46)) := by
        refine (rv_extract d L g2 (k1_off65 k ⟨2, by decide⟩) (k1_off65_inb k ⟨2, by decide⟩) (by decide) 14 (by decide) (by decide) (by decide)).trans ?_
        exact rv_word d L fl (wL L).val (2 * t1.val + 1) 1 (2 * k.val) 46 (by decide) (by omega) (by decide) g2 hR1 _
          (by rw [k1_off65_eq]; show 128 * k.val + 16 * 2 + 1024 + 14 = 1024 * 1 + 64 * (2 * k.val) + 46; omega) _
      have hw_v2207_2 : pair1_next.sl.v2207_2 d L k g2 = Spec.tcol (blkWord fl (wL L).val (2 * t1.val + 1) (64 * (2 * k.val) + 47)) := by
        refine (rv_extract d L g2 (k1_off65 k ⟨2, by decide⟩) (k1_off65_inb k ⟨2, by decide⟩) (by decide) 15 (by decide) (by decide) (by decide)).trans ?_
        exact rv_word d L fl (wL L).val (2 * t1.val + 1) 1 (2 * k.val) 47 (by decide) (by omega) (by decide) g2 hR1 _
          (by rw [k1_off65_eq]; show 128 * k.val + 16 * 2 + 1024 + 15 = 1024 * 1 + 64 * (2 * k.val) + 47; omega) _
      have hw_v1456 : pair1_next.sl.v1456 d L k g2 = Spec.tcol (blkWord fl (wL L).val (2 * t1.val + 1) (64 * (2 * k.val) + 48)) := by
        refine (rv_extract d L g2 (k1_off82 k) (k1_off82_inb k) (by decide) 0 (by decide) (by decide) (by decide)).trans ?_
        exact rv_word d L fl (wL L).val (2 * t1.val + 1) 1 (2 * k.val) 48 (by decide) (by omega) (by decide) g2 hR1 _
          (by rw [k1_off82_eq]; show 128 * k.val + 1072 + 0 = 1024 * 1 + 64 * (2 * k.val) + 48; omega) _
      have hw_v1490 : pair1_next.sl.v1490 d L k g2 = Spec.tcol (blkWord fl (wL L).val (2 * t1.val + 1) (64 * (2 * k.val) + 49)) := by
        refine (rv_extract d L g2 (k1_off82 k) (k1_off82_inb k) (by decide) 1 (by decide) (by decide) (by decide)).trans ?_
        exact rv_word d L fl (wL L).val (2 * t1.val + 1) 1 (2 * k.val) 49 (by decide) (by omega) (by decide) g2 hR1 _
          (by rw [k1_off82_eq]; show 128 * k.val + 1072 + 1 = 1024 * 1 + 64 * (2 * k.val) + 49; omega) _
      have hw_v1667_3 : pair1_next.sl.v1667_3 d L k g2 = Spec.tcol (blkWord fl (wL L).val (2 * t1.val + 1) (64 * (2 * k.val + 1) + 0)) := by
        refine (rv_extract d L g2 (k1_off92 k ⟨0, by decide⟩) (k1_off92_inb k ⟨0, by decide⟩) (by decide) 0 (by decide) (by decide) (by decide)).trans ?_
        exact rv_word d L fl (wL L).val (2 * t1.val + 1) 1 (2 * k.val + 1) 0 (by decide) (by omega) (by decide) g2 hR1 _
          (by rw [k1_off92_eq]; show 128 * k.val + 16 * 0 + 1088 + 0 = 1024 * 1 + 64 * (2 * k.val + 1) + 0; omega) _
      have hw_v1703_3 : pair1_next.sl.v1703_3 d L k g2 = Spec.tcol (blkWord fl (wL L).val (2 * t1.val + 1) (64 * (2 * k.val + 1) + 1)) := by
        refine (rv_extract d L g2 (k1_off92 k ⟨0, by decide⟩) (k1_off92_inb k ⟨0, by decide⟩) (by decide) 1 (by decide) (by decide) (by decide)).trans ?_
        exact rv_word d L fl (wL L).val (2 * t1.val + 1) 1 (2 * k.val + 1) 1 (by decide) (by omega) (by decide) g2 hR1 _
          (by rw [k1_off92_eq]; show 128 * k.val + 16 * 0 + 1088 + 1 = 1024 * 1 + 64 * (2 * k.val + 1) + 1; omega) _
      have hw_v1739_3 : pair1_next.sl.v1739_3 d L k g2 = Spec.tcol (blkWord fl (wL L).val (2 * t1.val + 1) (64 * (2 * k.val + 1) + 2)) := by
        refine (rv_extract d L g2 (k1_off92 k ⟨0, by decide⟩) (k1_off92_inb k ⟨0, by decide⟩) (by decide) 2 (by decide) (by decide) (by decide)).trans ?_
        exact rv_word d L fl (wL L).val (2 * t1.val + 1) 1 (2 * k.val + 1) 2 (by decide) (by omega) (by decide) g2 hR1 _
          (by rw [k1_off92_eq]; show 128 * k.val + 16 * 0 + 1088 + 2 = 1024 * 1 + 64 * (2 * k.val + 1) + 2; omega) _
      have hw_v1775_3 : pair1_next.sl.v1775_3 d L k g2 = Spec.tcol (blkWord fl (wL L).val (2 * t1.val + 1) (64 * (2 * k.val + 1) + 3)) := by
        refine (rv_extract d L g2 (k1_off92 k ⟨0, by decide⟩) (k1_off92_inb k ⟨0, by decide⟩) (by decide) 3 (by decide) (by decide) (by decide)).trans ?_
        exact rv_word d L fl (wL L).val (2 * t1.val + 1) 1 (2 * k.val + 1) 3 (by decide) (by omega) (by decide) g2 hR1 _
          (by rw [k1_off92_eq]; show 128 * k.val + 16 * 0 + 1088 + 3 = 1024 * 1 + 64 * (2 * k.val + 1) + 3; omega) _
      have hw_v1811_3 : pair1_next.sl.v1811_3 d L k g2 = Spec.tcol (blkWord fl (wL L).val (2 * t1.val + 1) (64 * (2 * k.val + 1) + 4)) := by
        refine (rv_extract d L g2 (k1_off92 k ⟨0, by decide⟩) (k1_off92_inb k ⟨0, by decide⟩) (by decide) 4 (by decide) (by decide) (by decide)).trans ?_
        exact rv_word d L fl (wL L).val (2 * t1.val + 1) 1 (2 * k.val + 1) 4 (by decide) (by omega) (by decide) g2 hR1 _
          (by rw [k1_off92_eq]; show 128 * k.val + 16 * 0 + 1088 + 4 = 1024 * 1 + 64 * (2 * k.val + 1) + 4; omega) _
      have hw_v1847_3 : pair1_next.sl.v1847_3 d L k g2 = Spec.tcol (blkWord fl (wL L).val (2 * t1.val + 1) (64 * (2 * k.val + 1) + 5)) := by
        refine (rv_extract d L g2 (k1_off92 k ⟨0, by decide⟩) (k1_off92_inb k ⟨0, by decide⟩) (by decide) 5 (by decide) (by decide) (by decide)).trans ?_
        exact rv_word d L fl (wL L).val (2 * t1.val + 1) 1 (2 * k.val + 1) 5 (by decide) (by omega) (by decide) g2 hR1 _
          (by rw [k1_off92_eq]; show 128 * k.val + 16 * 0 + 1088 + 5 = 1024 * 1 + 64 * (2 * k.val + 1) + 5; omega) _
      have hw_v1883_3 : pair1_next.sl.v1883_3 d L k g2 = Spec.tcol (blkWord fl (wL L).val (2 * t1.val + 1) (64 * (2 * k.val + 1) + 6)) := by
        refine (rv_extract d L g2 (k1_off92 k ⟨0, by decide⟩) (k1_off92_inb k ⟨0, by decide⟩) (by decide) 6 (by decide) (by decide) (by decide)).trans ?_
        exact rv_word d L fl (wL L).val (2 * t1.val + 1) 1 (2 * k.val + 1) 6 (by decide) (by omega) (by decide) g2 hR1 _
          (by rw [k1_off92_eq]; show 128 * k.val + 16 * 0 + 1088 + 6 = 1024 * 1 + 64 * (2 * k.val + 1) + 6; omega) _
      have hw_v1919_3 : pair1_next.sl.v1919_3 d L k g2 = Spec.tcol (blkWord fl (wL L).val (2 * t1.val + 1) (64 * (2 * k.val + 1) + 7)) := by
        refine (rv_extract d L g2 (k1_off92 k ⟨0, by decide⟩) (k1_off92_inb k ⟨0, by decide⟩) (by decide) 7 (by decide) (by decide) (by decide)).trans ?_
        exact rv_word d L fl (wL L).val (2 * t1.val + 1) 1 (2 * k.val + 1) 7 (by decide) (by omega) (by decide) g2 hR1 _
          (by rw [k1_off92_eq]; show 128 * k.val + 16 * 0 + 1088 + 7 = 1024 * 1 + 64 * (2 * k.val + 1) + 7; omega) _
      have hw_v1955_3 : pair1_next.sl.v1955_3 d L k g2 = Spec.tcol (blkWord fl (wL L).val (2 * t1.val + 1) (64 * (2 * k.val + 1) + 8)) := by
        refine (rv_extract d L g2 (k1_off92 k ⟨0, by decide⟩) (k1_off92_inb k ⟨0, by decide⟩) (by decide) 8 (by decide) (by decide) (by decide)).trans ?_
        exact rv_word d L fl (wL L).val (2 * t1.val + 1) 1 (2 * k.val + 1) 8 (by decide) (by omega) (by decide) g2 hR1 _
          (by rw [k1_off92_eq]; show 128 * k.val + 16 * 0 + 1088 + 8 = 1024 * 1 + 64 * (2 * k.val + 1) + 8; omega) _
      have hw_v1991_3 : pair1_next.sl.v1991_3 d L k g2 = Spec.tcol (blkWord fl (wL L).val (2 * t1.val + 1) (64 * (2 * k.val + 1) + 9)) := by
        refine (rv_extract d L g2 (k1_off92 k ⟨0, by decide⟩) (k1_off92_inb k ⟨0, by decide⟩) (by decide) 9 (by decide) (by decide) (by decide)).trans ?_
        exact rv_word d L fl (wL L).val (2 * t1.val + 1) 1 (2 * k.val + 1) 9 (by decide) (by omega) (by decide) g2 hR1 _
          (by rw [k1_off92_eq]; show 128 * k.val + 16 * 0 + 1088 + 9 = 1024 * 1 + 64 * (2 * k.val + 1) + 9; omega) _
      have hw_v2027_3 : pair1_next.sl.v2027_3 d L k g2 = Spec.tcol (blkWord fl (wL L).val (2 * t1.val + 1) (64 * (2 * k.val + 1) + 10)) := by
        refine (rv_extract d L g2 (k1_off92 k ⟨0, by decide⟩) (k1_off92_inb k ⟨0, by decide⟩) (by decide) 10 (by decide) (by decide) (by decide)).trans ?_
        exact rv_word d L fl (wL L).val (2 * t1.val + 1) 1 (2 * k.val + 1) 10 (by decide) (by omega) (by decide) g2 hR1 _
          (by rw [k1_off92_eq]; show 128 * k.val + 16 * 0 + 1088 + 10 = 1024 * 1 + 64 * (2 * k.val + 1) + 10; omega) _
      have hw_v2063_3 : pair1_next.sl.v2063_3 d L k g2 = Spec.tcol (blkWord fl (wL L).val (2 * t1.val + 1) (64 * (2 * k.val + 1) + 11)) := by
        refine (rv_extract d L g2 (k1_off92 k ⟨0, by decide⟩) (k1_off92_inb k ⟨0, by decide⟩) (by decide) 11 (by decide) (by decide) (by decide)).trans ?_
        exact rv_word d L fl (wL L).val (2 * t1.val + 1) 1 (2 * k.val + 1) 11 (by decide) (by omega) (by decide) g2 hR1 _
          (by rw [k1_off92_eq]; show 128 * k.val + 16 * 0 + 1088 + 11 = 1024 * 1 + 64 * (2 * k.val + 1) + 11; omega) _
      have hw_v2099_3 : pair1_next.sl.v2099_3 d L k g2 = Spec.tcol (blkWord fl (wL L).val (2 * t1.val + 1) (64 * (2 * k.val + 1) + 12)) := by
        refine (rv_extract d L g2 (k1_off92 k ⟨0, by decide⟩) (k1_off92_inb k ⟨0, by decide⟩) (by decide) 12 (by decide) (by decide) (by decide)).trans ?_
        exact rv_word d L fl (wL L).val (2 * t1.val + 1) 1 (2 * k.val + 1) 12 (by decide) (by omega) (by decide) g2 hR1 _
          (by rw [k1_off92_eq]; show 128 * k.val + 16 * 0 + 1088 + 12 = 1024 * 1 + 64 * (2 * k.val + 1) + 12; omega) _
      have hw_v2135_3 : pair1_next.sl.v2135_3 d L k g2 = Spec.tcol (blkWord fl (wL L).val (2 * t1.val + 1) (64 * (2 * k.val + 1) + 13)) := by
        refine (rv_extract d L g2 (k1_off92 k ⟨0, by decide⟩) (k1_off92_inb k ⟨0, by decide⟩) (by decide) 13 (by decide) (by decide) (by decide)).trans ?_
        exact rv_word d L fl (wL L).val (2 * t1.val + 1) 1 (2 * k.val + 1) 13 (by decide) (by omega) (by decide) g2 hR1 _
          (by rw [k1_off92_eq]; show 128 * k.val + 16 * 0 + 1088 + 13 = 1024 * 1 + 64 * (2 * k.val + 1) + 13; omega) _
      have hw_v2171_3 : pair1_next.sl.v2171_3 d L k g2 = Spec.tcol (blkWord fl (wL L).val (2 * t1.val + 1) (64 * (2 * k.val + 1) + 14)) := by
        refine (rv_extract d L g2 (k1_off92 k ⟨0, by decide⟩) (k1_off92_inb k ⟨0, by decide⟩) (by decide) 14 (by decide) (by decide) (by decide)).trans ?_
        exact rv_word d L fl (wL L).val (2 * t1.val + 1) 1 (2 * k.val + 1) 14 (by decide) (by omega) (by decide) g2 hR1 _
          (by rw [k1_off92_eq]; show 128 * k.val + 16 * 0 + 1088 + 14 = 1024 * 1 + 64 * (2 * k.val + 1) + 14; omega) _
      have hw_v2207_3 : pair1_next.sl.v2207_3 d L k g2 = Spec.tcol (blkWord fl (wL L).val (2 * t1.val + 1) (64 * (2 * k.val + 1) + 15)) := by
        refine (rv_extract d L g2 (k1_off92 k ⟨0, by decide⟩) (k1_off92_inb k ⟨0, by decide⟩) (by decide) 15 (by decide) (by decide) (by decide)).trans ?_
        exact rv_word d L fl (wL L).val (2 * t1.val + 1) 1 (2 * k.val + 1) 15 (by decide) (by omega) (by decide) g2 hR1 _
          (by rw [k1_off92_eq]; show 128 * k.val + 16 * 0 + 1088 + 15 = 1024 * 1 + 64 * (2 * k.val + 1) + 15; omega) _
      have hw_v1667_4 : pair1_next.sl.v1667_4 d L k g2 = Spec.tcol (blkWord fl (wL L).val (2 * t1.val + 1) (64 * (2 * k.val + 1) + 16)) := by
        refine (rv_extract d L g2 (k1_off92 k ⟨1, by decide⟩) (k1_off92_inb k ⟨1, by decide⟩) (by decide) 0 (by decide) (by decide) (by decide)).trans ?_
        exact rv_word d L fl (wL L).val (2 * t1.val + 1) 1 (2 * k.val + 1) 16 (by decide) (by omega) (by decide) g2 hR1 _
          (by rw [k1_off92_eq]; show 128 * k.val + 16 * 1 + 1088 + 0 = 1024 * 1 + 64 * (2 * k.val + 1) + 16; omega) _
      have hw_v1703_4 : pair1_next.sl.v1703_4 d L k g2 = Spec.tcol (blkWord fl (wL L).val (2 * t1.val + 1) (64 * (2 * k.val + 1) + 17)) := by
        refine (rv_extract d L g2 (k1_off92 k ⟨1, by decide⟩) (k1_off92_inb k ⟨1, by decide⟩) (by decide) 1 (by decide) (by decide) (by decide)).trans ?_
        exact rv_word d L fl (wL L).val (2 * t1.val + 1) 1 (2 * k.val + 1) 17 (by decide) (by omega) (by decide) g2 hR1 _
          (by rw [k1_off92_eq]; show 128 * k.val + 16 * 1 + 1088 + 1 = 1024 * 1 + 64 * (2 * k.val + 1) + 17; omega) _
      have hw_v1739_4 : pair1_next.sl.v1739_4 d L k g2 = Spec.tcol (blkWord fl (wL L).val (2 * t1.val + 1) (64 * (2 * k.val + 1) + 18)) := by
        refine (rv_extract d L g2 (k1_off92 k ⟨1, by decide⟩) (k1_off92_inb k ⟨1, by decide⟩) (by decide) 2 (by decide) (by decide) (by decide)).trans ?_
        exact rv_word d L fl (wL L).val (2 * t1.val + 1) 1 (2 * k.val + 1) 18 (by decide) (by omega) (by decide) g2 hR1 _
          (by rw [k1_off92_eq]; show 128 * k.val + 16 * 1 + 1088 + 2 = 1024 * 1 + 64 * (2 * k.val + 1) + 18; omega) _
      have hw_v1775_4 : pair1_next.sl.v1775_4 d L k g2 = Spec.tcol (blkWord fl (wL L).val (2 * t1.val + 1) (64 * (2 * k.val + 1) + 19)) := by
        refine (rv_extract d L g2 (k1_off92 k ⟨1, by decide⟩) (k1_off92_inb k ⟨1, by decide⟩) (by decide) 3 (by decide) (by decide) (by decide)).trans ?_
        exact rv_word d L fl (wL L).val (2 * t1.val + 1) 1 (2 * k.val + 1) 19 (by decide) (by omega) (by decide) g2 hR1 _
          (by rw [k1_off92_eq]; show 128 * k.val + 16 * 1 + 1088 + 3 = 1024 * 1 + 64 * (2 * k.val + 1) + 19; omega) _
      have hw_v1811_4 : pair1_next.sl.v1811_4 d L k g2 = Spec.tcol (blkWord fl (wL L).val (2 * t1.val + 1) (64 * (2 * k.val + 1) + 20)) := by
        refine (rv_extract d L g2 (k1_off92 k ⟨1, by decide⟩) (k1_off92_inb k ⟨1, by decide⟩) (by decide) 4 (by decide) (by decide) (by decide)).trans ?_
        exact rv_word d L fl (wL L).val (2 * t1.val + 1) 1 (2 * k.val + 1) 20 (by decide) (by omega) (by decide) g2 hR1 _
          (by rw [k1_off92_eq]; show 128 * k.val + 16 * 1 + 1088 + 4 = 1024 * 1 + 64 * (2 * k.val + 1) + 20; omega) _
      have hw_v1847_4 : pair1_next.sl.v1847_4 d L k g2 = Spec.tcol (blkWord fl (wL L).val (2 * t1.val + 1) (64 * (2 * k.val + 1) + 21)) := by
        refine (rv_extract d L g2 (k1_off92 k ⟨1, by decide⟩) (k1_off92_inb k ⟨1, by decide⟩) (by decide) 5 (by decide) (by decide) (by decide)).trans ?_
        exact rv_word d L fl (wL L).val (2 * t1.val + 1) 1 (2 * k.val + 1) 21 (by decide) (by omega) (by decide) g2 hR1 _
          (by rw [k1_off92_eq]; show 128 * k.val + 16 * 1 + 1088 + 5 = 1024 * 1 + 64 * (2 * k.val + 1) + 21; omega) _
      have hw_v1883_4 : pair1_next.sl.v1883_4 d L k g2 = Spec.tcol (blkWord fl (wL L).val (2 * t1.val + 1) (64 * (2 * k.val + 1) + 22)) := by
        refine (rv_extract d L g2 (k1_off92 k ⟨1, by decide⟩) (k1_off92_inb k ⟨1, by decide⟩) (by decide) 6 (by decide) (by decide) (by decide)).trans ?_
        exact rv_word d L fl (wL L).val (2 * t1.val + 1) 1 (2 * k.val + 1) 22 (by decide) (by omega) (by decide) g2 hR1 _
          (by rw [k1_off92_eq]; show 128 * k.val + 16 * 1 + 1088 + 6 = 1024 * 1 + 64 * (2 * k.val + 1) + 22; omega) _
      have hw_v1919_4 : pair1_next.sl.v1919_4 d L k g2 = Spec.tcol (blkWord fl (wL L).val (2 * t1.val + 1) (64 * (2 * k.val + 1) + 23)) := by
        refine (rv_extract d L g2 (k1_off92 k ⟨1, by decide⟩) (k1_off92_inb k ⟨1, by decide⟩) (by decide) 7 (by decide) (by decide) (by decide)).trans ?_
        exact rv_word d L fl (wL L).val (2 * t1.val + 1) 1 (2 * k.val + 1) 23 (by decide) (by omega) (by decide) g2 hR1 _
          (by rw [k1_off92_eq]; show 128 * k.val + 16 * 1 + 1088 + 7 = 1024 * 1 + 64 * (2 * k.val + 1) + 23; omega) _
      have hw_v1955_4 : pair1_next.sl.v1955_4 d L k g2 = Spec.tcol (blkWord fl (wL L).val (2 * t1.val + 1) (64 * (2 * k.val + 1) + 24)) := by
        refine (rv_extract d L g2 (k1_off92 k ⟨1, by decide⟩) (k1_off92_inb k ⟨1, by decide⟩) (by decide) 8 (by decide) (by decide) (by decide)).trans ?_
        exact rv_word d L fl (wL L).val (2 * t1.val + 1) 1 (2 * k.val + 1) 24 (by decide) (by omega) (by decide) g2 hR1 _
          (by rw [k1_off92_eq]; show 128 * k.val + 16 * 1 + 1088 + 8 = 1024 * 1 + 64 * (2 * k.val + 1) + 24; omega) _
      have hw_v1991_4 : pair1_next.sl.v1991_4 d L k g2 = Spec.tcol (blkWord fl (wL L).val (2 * t1.val + 1) (64 * (2 * k.val + 1) + 25)) := by
        refine (rv_extract d L g2 (k1_off92 k ⟨1, by decide⟩) (k1_off92_inb k ⟨1, by decide⟩) (by decide) 9 (by decide) (by decide) (by decide)).trans ?_
        exact rv_word d L fl (wL L).val (2 * t1.val + 1) 1 (2 * k.val + 1) 25 (by decide) (by omega) (by decide) g2 hR1 _
          (by rw [k1_off92_eq]; show 128 * k.val + 16 * 1 + 1088 + 9 = 1024 * 1 + 64 * (2 * k.val + 1) + 25; omega) _
      have hw_v2027_4 : pair1_next.sl.v2027_4 d L k g2 = Spec.tcol (blkWord fl (wL L).val (2 * t1.val + 1) (64 * (2 * k.val + 1) + 26)) := by
        refine (rv_extract d L g2 (k1_off92 k ⟨1, by decide⟩) (k1_off92_inb k ⟨1, by decide⟩) (by decide) 10 (by decide) (by decide) (by decide)).trans ?_
        exact rv_word d L fl (wL L).val (2 * t1.val + 1) 1 (2 * k.val + 1) 26 (by decide) (by omega) (by decide) g2 hR1 _
          (by rw [k1_off92_eq]; show 128 * k.val + 16 * 1 + 1088 + 10 = 1024 * 1 + 64 * (2 * k.val + 1) + 26; omega) _
      have hw_v2063_4 : pair1_next.sl.v2063_4 d L k g2 = Spec.tcol (blkWord fl (wL L).val (2 * t1.val + 1) (64 * (2 * k.val + 1) + 27)) := by
        refine (rv_extract d L g2 (k1_off92 k ⟨1, by decide⟩) (k1_off92_inb k ⟨1, by decide⟩) (by decide) 11 (by decide) (by decide) (by decide)).trans ?_
        exact rv_word d L fl (wL L).val (2 * t1.val + 1) 1 (2 * k.val + 1) 27 (by decide) (by omega) (by decide) g2 hR1 _
          (by rw [k1_off92_eq]; show 128 * k.val + 16 * 1 + 1088 + 11 = 1024 * 1 + 64 * (2 * k.val + 1) + 27; omega) _
      have hw_v2099_4 : pair1_next.sl.v2099_4 d L k g2 = Spec.tcol (blkWord fl (wL L).val (2 * t1.val + 1) (64 * (2 * k.val + 1) + 28)) := by
        refine (rv_extract d L g2 (k1_off92 k ⟨1, by decide⟩) (k1_off92_inb k ⟨1, by decide⟩) (by decide) 12 (by decide) (by decide) (by decide)).trans ?_
        exact rv_word d L fl (wL L).val (2 * t1.val + 1) 1 (2 * k.val + 1) 28 (by decide) (by omega) (by decide) g2 hR1 _
          (by rw [k1_off92_eq]; show 128 * k.val + 16 * 1 + 1088 + 12 = 1024 * 1 + 64 * (2 * k.val + 1) + 28; omega) _
      have hw_v2135_4 : pair1_next.sl.v2135_4 d L k g2 = Spec.tcol (blkWord fl (wL L).val (2 * t1.val + 1) (64 * (2 * k.val + 1) + 29)) := by
        refine (rv_extract d L g2 (k1_off92 k ⟨1, by decide⟩) (k1_off92_inb k ⟨1, by decide⟩) (by decide) 13 (by decide) (by decide) (by decide)).trans ?_
        exact rv_word d L fl (wL L).val (2 * t1.val + 1) 1 (2 * k.val + 1) 29 (by decide) (by omega) (by decide) g2 hR1 _
          (by rw [k1_off92_eq]; show 128 * k.val + 16 * 1 + 1088 + 13 = 1024 * 1 + 64 * (2 * k.val + 1) + 29; omega) _
      have hw_v2171_4 : pair1_next.sl.v2171_4 d L k g2 = Spec.tcol (blkWord fl (wL L).val (2 * t1.val + 1) (64 * (2 * k.val + 1) + 30)) := by
        refine (rv_extract d L g2 (k1_off92 k ⟨1, by decide⟩) (k1_off92_inb k ⟨1, by decide⟩) (by decide) 14 (by decide) (by decide) (by decide)).trans ?_
        exact rv_word d L fl (wL L).val (2 * t1.val + 1) 1 (2 * k.val + 1) 30 (by decide) (by omega) (by decide) g2 hR1 _
          (by rw [k1_off92_eq]; show 128 * k.val + 16 * 1 + 1088 + 14 = 1024 * 1 + 64 * (2 * k.val + 1) + 30; omega) _
      have hw_v2207_4 : pair1_next.sl.v2207_4 d L k g2 = Spec.tcol (blkWord fl (wL L).val (2 * t1.val + 1) (64 * (2 * k.val + 1) + 31)) := by
        refine (rv_extract d L g2 (k1_off92 k ⟨1, by decide⟩) (k1_off92_inb k ⟨1, by decide⟩) (by decide) 15 (by decide) (by decide) (by decide)).trans ?_
        exact rv_word d L fl (wL L).val (2 * t1.val + 1) 1 (2 * k.val + 1) 31 (by decide) (by omega) (by decide) g2 hR1 _
          (by rw [k1_off92_eq]; show 128 * k.val + 16 * 1 + 1088 + 15 = 1024 * 1 + 64 * (2 * k.val + 1) + 31; omega) _
      have hw_v1667_5 : pair1_next.sl.v1667_5 d L k g2 = Spec.tcol (blkWord fl (wL L).val (2 * t1.val + 1) (64 * (2 * k.val + 1) + 32)) := by
        refine (rv_extract d L g2 (k1_off92 k ⟨2, by decide⟩) (k1_off92_inb k ⟨2, by decide⟩) (by decide) 0 (by decide) (by decide) (by decide)).trans ?_
        exact rv_word d L fl (wL L).val (2 * t1.val + 1) 1 (2 * k.val + 1) 32 (by decide) (by omega) (by decide) g2 hR1 _
          (by rw [k1_off92_eq]; show 128 * k.val + 16 * 2 + 1088 + 0 = 1024 * 1 + 64 * (2 * k.val + 1) + 32; omega) _
      have hw_v1703_5 : pair1_next.sl.v1703_5 d L k g2 = Spec.tcol (blkWord fl (wL L).val (2 * t1.val + 1) (64 * (2 * k.val + 1) + 33)) := by
        refine (rv_extract d L g2 (k1_off92 k ⟨2, by decide⟩) (k1_off92_inb k ⟨2, by decide⟩) (by decide) 1 (by decide) (by decide) (by decide)).trans ?_
        exact rv_word d L fl (wL L).val (2 * t1.val + 1) 1 (2 * k.val + 1) 33 (by decide) (by omega) (by decide) g2 hR1 _
          (by rw [k1_off92_eq]; show 128 * k.val + 16 * 2 + 1088 + 1 = 1024 * 1 + 64 * (2 * k.val + 1) + 33; omega) _
      have hw_v1739_5 : pair1_next.sl.v1739_5 d L k g2 = Spec.tcol (blkWord fl (wL L).val (2 * t1.val + 1) (64 * (2 * k.val + 1) + 34)) := by
        refine (rv_extract d L g2 (k1_off92 k ⟨2, by decide⟩) (k1_off92_inb k ⟨2, by decide⟩) (by decide) 2 (by decide) (by decide) (by decide)).trans ?_
        exact rv_word d L fl (wL L).val (2 * t1.val + 1) 1 (2 * k.val + 1) 34 (by decide) (by omega) (by decide) g2 hR1 _
          (by rw [k1_off92_eq]; show 128 * k.val + 16 * 2 + 1088 + 2 = 1024 * 1 + 64 * (2 * k.val + 1) + 34; omega) _
      have hw_v1775_5 : pair1_next.sl.v1775_5 d L k g2 = Spec.tcol (blkWord fl (wL L).val (2 * t1.val + 1) (64 * (2 * k.val + 1) + 35)) := by
        refine (rv_extract d L g2 (k1_off92 k ⟨2, by decide⟩) (k1_off92_inb k ⟨2, by decide⟩) (by decide) 3 (by decide) (by decide) (by decide)).trans ?_
        exact rv_word d L fl (wL L).val (2 * t1.val + 1) 1 (2 * k.val + 1) 35 (by decide) (by omega) (by decide) g2 hR1 _
          (by rw [k1_off92_eq]; show 128 * k.val + 16 * 2 + 1088 + 3 = 1024 * 1 + 64 * (2 * k.val + 1) + 35; omega) _
      have hw_v1811_5 : pair1_next.sl.v1811_5 d L k g2 = Spec.tcol (blkWord fl (wL L).val (2 * t1.val + 1) (64 * (2 * k.val + 1) + 36)) := by
        refine (rv_extract d L g2 (k1_off92 k ⟨2, by decide⟩) (k1_off92_inb k ⟨2, by decide⟩) (by decide) 4 (by decide) (by decide) (by decide)).trans ?_
        exact rv_word d L fl (wL L).val (2 * t1.val + 1) 1 (2 * k.val + 1) 36 (by decide) (by omega) (by decide) g2 hR1 _
          (by rw [k1_off92_eq]; show 128 * k.val + 16 * 2 + 1088 + 4 = 1024 * 1 + 64 * (2 * k.val + 1) + 36; omega) _
      have hw_v1847_5 : pair1_next.sl.v1847_5 d L k g2 = Spec.tcol (blkWord fl (wL L).val (2 * t1.val + 1) (64 * (2 * k.val + 1) + 37)) := by
        refine (rv_extract d L g2 (k1_off92 k ⟨2, by decide⟩) (k1_off92_inb k ⟨2, by decide⟩) (by decide) 5 (by decide) (by decide) (by decide)).trans ?_
        exact rv_word d L fl (wL L).val (2 * t1.val + 1) 1 (2 * k.val + 1) 37 (by decide) (by omega) (by decide) g2 hR1 _
          (by rw [k1_off92_eq]; show 128 * k.val + 16 * 2 + 1088 + 5 = 1024 * 1 + 64 * (2 * k.val + 1) + 37; omega) _
      have hw_v1883_5 : pair1_next.sl.v1883_5 d L k g2 = Spec.tcol (blkWord fl (wL L).val (2 * t1.val + 1) (64 * (2 * k.val + 1) + 38)) := by
        refine (rv_extract d L g2 (k1_off92 k ⟨2, by decide⟩) (k1_off92_inb k ⟨2, by decide⟩) (by decide) 6 (by decide) (by decide) (by decide)).trans ?_
        exact rv_word d L fl (wL L).val (2 * t1.val + 1) 1 (2 * k.val + 1) 38 (by decide) (by omega) (by decide) g2 hR1 _
          (by rw [k1_off92_eq]; show 128 * k.val + 16 * 2 + 1088 + 6 = 1024 * 1 + 64 * (2 * k.val + 1) + 38; omega) _
      have hw_v1919_5 : pair1_next.sl.v1919_5 d L k g2 = Spec.tcol (blkWord fl (wL L).val (2 * t1.val + 1) (64 * (2 * k.val + 1) + 39)) := by
        refine (rv_extract d L g2 (k1_off92 k ⟨2, by decide⟩) (k1_off92_inb k ⟨2, by decide⟩) (by decide) 7 (by decide) (by decide) (by decide)).trans ?_
        exact rv_word d L fl (wL L).val (2 * t1.val + 1) 1 (2 * k.val + 1) 39 (by decide) (by omega) (by decide) g2 hR1 _
          (by rw [k1_off92_eq]; show 128 * k.val + 16 * 2 + 1088 + 7 = 1024 * 1 + 64 * (2 * k.val + 1) + 39; omega) _
      have hw_v1955_5 : pair1_next.sl.v1955_5 d L k g2 = Spec.tcol (blkWord fl (wL L).val (2 * t1.val + 1) (64 * (2 * k.val + 1) + 40)) := by
        refine (rv_extract d L g2 (k1_off92 k ⟨2, by decide⟩) (k1_off92_inb k ⟨2, by decide⟩) (by decide) 8 (by decide) (by decide) (by decide)).trans ?_
        exact rv_word d L fl (wL L).val (2 * t1.val + 1) 1 (2 * k.val + 1) 40 (by decide) (by omega) (by decide) g2 hR1 _
          (by rw [k1_off92_eq]; show 128 * k.val + 16 * 2 + 1088 + 8 = 1024 * 1 + 64 * (2 * k.val + 1) + 40; omega) _
      have hw_v1991_5 : pair1_next.sl.v1991_5 d L k g2 = Spec.tcol (blkWord fl (wL L).val (2 * t1.val + 1) (64 * (2 * k.val + 1) + 41)) := by
        refine (rv_extract d L g2 (k1_off92 k ⟨2, by decide⟩) (k1_off92_inb k ⟨2, by decide⟩) (by decide) 9 (by decide) (by decide) (by decide)).trans ?_
        exact rv_word d L fl (wL L).val (2 * t1.val + 1) 1 (2 * k.val + 1) 41 (by decide) (by omega) (by decide) g2 hR1 _
          (by rw [k1_off92_eq]; show 128 * k.val + 16 * 2 + 1088 + 9 = 1024 * 1 + 64 * (2 * k.val + 1) + 41; omega) _
      have hw_v2027_5 : pair1_next.sl.v2027_5 d L k g2 = Spec.tcol (blkWord fl (wL L).val (2 * t1.val + 1) (64 * (2 * k.val + 1) + 42)) := by
        refine (rv_extract d L g2 (k1_off92 k ⟨2, by decide⟩) (k1_off92_inb k ⟨2, by decide⟩) (by decide) 10 (by decide) (by decide) (by decide)).trans ?_
        exact rv_word d L fl (wL L).val (2 * t1.val + 1) 1 (2 * k.val + 1) 42 (by decide) (by omega) (by decide) g2 hR1 _
          (by rw [k1_off92_eq]; show 128 * k.val + 16 * 2 + 1088 + 10 = 1024 * 1 + 64 * (2 * k.val + 1) + 42; omega) _
      have hw_v2063_5 : pair1_next.sl.v2063_5 d L k g2 = Spec.tcol (blkWord fl (wL L).val (2 * t1.val + 1) (64 * (2 * k.val + 1) + 43)) := by
        refine (rv_extract d L g2 (k1_off92 k ⟨2, by decide⟩) (k1_off92_inb k ⟨2, by decide⟩) (by decide) 11 (by decide) (by decide) (by decide)).trans ?_
        exact rv_word d L fl (wL L).val (2 * t1.val + 1) 1 (2 * k.val + 1) 43 (by decide) (by omega) (by decide) g2 hR1 _
          (by rw [k1_off92_eq]; show 128 * k.val + 16 * 2 + 1088 + 11 = 1024 * 1 + 64 * (2 * k.val + 1) + 43; omega) _
      have hw_v2099_5 : pair1_next.sl.v2099_5 d L k g2 = Spec.tcol (blkWord fl (wL L).val (2 * t1.val + 1) (64 * (2 * k.val + 1) + 44)) := by
        refine (rv_extract d L g2 (k1_off92 k ⟨2, by decide⟩) (k1_off92_inb k ⟨2, by decide⟩) (by decide) 12 (by decide) (by decide) (by decide)).trans ?_
        exact rv_word d L fl (wL L).val (2 * t1.val + 1) 1 (2 * k.val + 1) 44 (by decide) (by omega) (by decide) g2 hR1 _
          (by rw [k1_off92_eq]; show 128 * k.val + 16 * 2 + 1088 + 12 = 1024 * 1 + 64 * (2 * k.val + 1) + 44; omega) _
      have hw_v2135_5 : pair1_next.sl.v2135_5 d L k g2 = Spec.tcol (blkWord fl (wL L).val (2 * t1.val + 1) (64 * (2 * k.val + 1) + 45)) := by
        refine (rv_extract d L g2 (k1_off92 k ⟨2, by decide⟩) (k1_off92_inb k ⟨2, by decide⟩) (by decide) 13 (by decide) (by decide) (by decide)).trans ?_
        exact rv_word d L fl (wL L).val (2 * t1.val + 1) 1 (2 * k.val + 1) 45 (by decide) (by omega) (by decide) g2 hR1 _
          (by rw [k1_off92_eq]; show 128 * k.val + 16 * 2 + 1088 + 13 = 1024 * 1 + 64 * (2 * k.val + 1) + 45; omega) _
      have hw_v2171_5 : pair1_next.sl.v2171_5 d L k g2 = Spec.tcol (blkWord fl (wL L).val (2 * t1.val + 1) (64 * (2 * k.val + 1) + 46)) := by
        refine (rv_extract d L g2 (k1_off92 k ⟨2, by decide⟩) (k1_off92_inb k ⟨2, by decide⟩) (by decide) 14 (by decide) (by decide) (by decide)).trans ?_
        exact rv_word d L fl (wL L).val (2 * t1.val + 1) 1 (2 * k.val + 1) 46 (by decide) (by omega) (by decide) g2 hR1 _
          (by rw [k1_off92_eq]; show 128 * k.val + 16 * 2 + 1088 + 14 = 1024 * 1 + 64 * (2 * k.val + 1) + 46; omega) _
      have hw_v2207_5 : pair1_next.sl.v2207_5 d L k g2 = Spec.tcol (blkWord fl (wL L).val (2 * t1.val + 1) (64 * (2 * k.val + 1) + 47)) := by
        refine (rv_extract d L g2 (k1_off92 k ⟨2, by decide⟩) (k1_off92_inb k ⟨2, by decide⟩) (by decide) 15 (by decide) (by decide) (by decide)).trans ?_
        exact rv_word d L fl (wL L).val (2 * t1.val + 1) 1 (2 * k.val + 1) 47 (by decide) (by omega) (by decide) g2 hR1 _
          (by rw [k1_off92_eq]; show 128 * k.val + 16 * 2 + 1088 + 15 = 1024 * 1 + 64 * (2 * k.val + 1) + 47; omega) _
      have hw_v1572 : pair1_next.sl.v1572 d L k g2 = Spec.tcol (blkWord fl (wL L).val (2 * t1.val + 1) (64 * (2 * k.val + 1) + 48)) := by
        refine (rv_extract d L g2 (k1_off109 k) (k1_off109_inb k) (by decide) 0 (by decide) (by decide) (by decide)).trans ?_
        exact rv_word d L fl (wL L).val (2 * t1.val + 1) 1 (2 * k.val + 1) 48 (by decide) (by omega) (by decide) g2 hR1 _
          (by rw [k1_off109_eq]; show 128 * k.val + 1136 + 0 = 1024 * 1 + 64 * (2 * k.val + 1) + 48; omega) _
      have hw_v1606 : pair1_next.sl.v1606 d L k g2 = Spec.tcol (blkWord fl (wL L).val (2 * t1.val + 1) (64 * (2 * k.val + 1) + 49)) := by
        refine (rv_extract d L g2 (k1_off109 k) (k1_off109_inb k) (by decide) 1 (by decide) (by decide) (by decide)).trans ?_
        exact rv_word d L fl (wL L).val (2 * t1.val + 1) 1 (2 * k.val + 1) 49 (by decide) (by omega) (by decide) g2 hR1 _
          (by rw [k1_off109_eq]; show 128 * k.val + 1136 + 1 = 1024 * 1 + 64 * (2 * k.val + 1) + 49; omega) _
      have s_A0_0 : addf (AccMath.accVec (rowF fl tab (wL L).val (2 * t1.val + 1) (2 * k.val)) (offF fl (wL L).val (2 * t1.val + 1) (2 * k.val)) 0 0) (shapeCast S16 (pair1_next.sl.v1673 d L tab k r g1 g2 hR hin) hc16) = AccMath.accVec (rowF fl tab (wL L).val (2 * t1.val + 1) (2 * k.val)) (offF fl (wL L).val (2 * t1.val + 1) (2 * k.val)) 0 1 :=
        acc_step d L fl tab (wL L).val (2 * t1.val + 1) (2 * k.val) 0 _ hRA ⟨0, by decide⟩ ⟨0, by decide⟩ _ rfl _ hw_v1667 _ (k1_off66_form ..) _ hc16
      have s_A0_1 : addf (AccMath.accVec (rowF fl tab (wL L).val (2 * t1.val + 1) (2 * k.val)) (offF fl (wL L).val (2 * t1.val + 1) (2 * k.val)) 0 1) (shapeCast S16 (pair1_next.sl.v1709 d L tab k r g1 g2 hR hin) hc16) = AccMath.accVec (rowF fl tab (wL L).val (2 * t1.val + 1) (2 * k.val)) (offF fl (wL L).val (2 * t1.val + 1) (2 * k.val)) 0 2 :=
        acc_step d L fl tab (wL L).val (2 * t1.val + 1) (2 * k.val) 0 _ hRA ⟨1, by decide⟩ ⟨0, by decide⟩ _ rfl _ hw_v1703 _ (k1_off67_form ..) _ hc16
      have s_A0_2 : addf (AccMath.accVec (rowF fl tab (wL L).val (2 * t1.val + 1) (2 * k.val)) (offF fl (wL L).val (2 * t1.val + 1) (2 * k.val)) 0 2) (shapeCast S16 (pair1_next.sl.v1745 d L tab k r g1 g2 hR hin) hc16) = AccMath.accVec (rowF fl tab (wL L).val (2 * t1.val + 1) (2 * k.val)) (offF fl (wL L).val (2 * t1.val + 1) (2 * k.val)) 0 3 :=
        acc_step d L fl tab (wL L).val (2 * t1.val + 1) (2 * k.val) 0 _ hRA ⟨2, by decide⟩ ⟨0, by decide⟩ _ rfl _ hw_v1739 _ (k1_off68_form ..) _ hc16
      have s_A0_3 : addf (AccMath.accVec (rowF fl tab (wL L).val (2 * t1.val + 1) (2 * k.val)) (offF fl (wL L).val (2 * t1.val + 1) (2 * k.val)) 0 3) (shapeCast S16 (pair1_next.sl.v1781 d L tab k r g1 g2 hR hin) hc16) = AccMath.accVec (rowF fl tab (wL L).val (2 * t1.val + 1) (2 * k.val)) (offF fl (wL L).val (2 * t1.val + 1) (2 * k.val)) 0 4 :=
        acc_step d L fl tab (wL L).val (2 * t1.val + 1) (2 * k.val) 0 _ hRA ⟨3, by decide⟩ ⟨0, by decide⟩ _ rfl _ hw_v1775 _ (k1_off69_form ..) _ hc16
      have s_A0_4 : addf (AccMath.accVec (rowF fl tab (wL L).val (2 * t1.val + 1) (2 * k.val)) (offF fl (wL L).val (2 * t1.val + 1) (2 * k.val)) 0 4) (shapeCast S16 (pair1_next.sl.v1817 d L tab k r g1 g2 hR hin) hc16) = AccMath.accVec (rowF fl tab (wL L).val (2 * t1.val + 1) (2 * k.val)) (offF fl (wL L).val (2 * t1.val + 1) (2 * k.val)) 0 5 :=
        acc_step d L fl tab (wL L).val (2 * t1.val + 1) (2 * k.val) 0 _ hRA ⟨4, by decide⟩ ⟨0, by decide⟩ _ rfl _ hw_v1811 _ (k1_off70_form ..) _ hc16
      have s_A0_5 : addf (AccMath.accVec (rowF fl tab (wL L).val (2 * t1.val + 1) (2 * k.val)) (offF fl (wL L).val (2 * t1.val + 1) (2 * k.val)) 0 5) (shapeCast S16 (pair1_next.sl.v1853 d L tab k r g1 g2 hR hin) hc16) = AccMath.accVec (rowF fl tab (wL L).val (2 * t1.val + 1) (2 * k.val)) (offF fl (wL L).val (2 * t1.val + 1) (2 * k.val)) 0 6 :=
        acc_step d L fl tab (wL L).val (2 * t1.val + 1) (2 * k.val) 0 _ hRA ⟨5, by decide⟩ ⟨0, by decide⟩ _ rfl _ hw_v1847 _ (k1_off71_form ..) _ hc16
      have s_A0_6 : addf (AccMath.accVec (rowF fl tab (wL L).val (2 * t1.val + 1) (2 * k.val)) (offF fl (wL L).val (2 * t1.val + 1) (2 * k.val)) 0 6) (shapeCast S16 (pair1_next.sl.v1889 d L tab k r g1 g2 hR hin) hc16) = AccMath.accVec (rowF fl tab (wL L).val (2 * t1.val + 1) (2 * k.val)) (offF fl (wL L).val (2 * t1.val + 1) (2 * k.val)) 0 7 :=
        acc_step d L fl tab (wL L).val (2 * t1.val + 1) (2 * k.val) 0 _ hRA ⟨6, by decide⟩ ⟨0, by decide⟩ _ rfl _ hw_v1883 _ (k1_off72_form ..) _ hc16
      have s_A0_7 : addf (AccMath.accVec (rowF fl tab (wL L).val (2 * t1.val + 1) (2 * k.val)) (offF fl (wL L).val (2 * t1.val + 1) (2 * k.val)) 0 7) (shapeCast S16 (pair1_next.sl.v1925 d L tab k r g1 g2 hR hin) hc16) = AccMath.accVec (rowF fl tab (wL L).val (2 * t1.val + 1) (2 * k.val)) (offF fl (wL L).val (2 * t1.val + 1) (2 * k.val)) 0 8 :=
        acc_step d L fl tab (wL L).val (2 * t1.val + 1) (2 * k.val) 0 _ hRA ⟨7, by decide⟩ ⟨0, by decide⟩ _ rfl _ hw_v1919 _ (k1_off73_form ..) _ hc16
      have s_A0_8 : addf (AccMath.accVec (rowF fl tab (wL L).val (2 * t1.val + 1) (2 * k.val)) (offF fl (wL L).val (2 * t1.val + 1) (2 * k.val)) 0 8) (shapeCast S16 (pair1_next.sl.v1961 d L tab k r g1 g2 hR hin) hc16) = AccMath.accVec (rowF fl tab (wL L).val (2 * t1.val + 1) (2 * k.val)) (offF fl (wL L).val (2 * t1.val + 1) (2 * k.val)) 0 9 :=
        acc_step d L fl tab (wL L).val (2 * t1.val + 1) (2 * k.val) 0 _ hRA ⟨8, by decide⟩ ⟨0, by decide⟩ _ rfl _ hw_v1955 _ (k1_off74_form ..) _ hc16
      have s_A0_9 : addf (AccMath.accVec (rowF fl tab (wL L).val (2 * t1.val + 1) (2 * k.val)) (offF fl (wL L).val (2 * t1.val + 1) (2 * k.val)) 0 9) (shapeCast S16 (pair1_next.sl.v1997 d L tab k r g1 g2 hR hin) hc16) = AccMath.accVec (rowF fl tab (wL L).val (2 * t1.val + 1) (2 * k.val)) (offF fl (wL L).val (2 * t1.val + 1) (2 * k.val)) 0 10 :=
        acc_step d L fl tab (wL L).val (2 * t1.val + 1) (2 * k.val) 0 _ hRA ⟨9, by decide⟩ ⟨0, by decide⟩ _ rfl _ hw_v1991 _ (k1_off75_form ..) _ hc16
      have s_A0_10 : addf (AccMath.accVec (rowF fl tab (wL L).val (2 * t1.val + 1) (2 * k.val)) (offF fl (wL L).val (2 * t1.val + 1) (2 * k.val)) 0 10) (shapeCast S16 (pair1_next.sl.v2033 d L tab k r g1 g2 hR hin) hc16) = AccMath.accVec (rowF fl tab (wL L).val (2 * t1.val + 1) (2 * k.val)) (offF fl (wL L).val (2 * t1.val + 1) (2 * k.val)) 0 11 :=
        acc_step d L fl tab (wL L).val (2 * t1.val + 1) (2 * k.val) 0 _ hRA ⟨10, by decide⟩ ⟨0, by decide⟩ _ rfl _ hw_v2027 _ (k1_off76_form ..) _ hc16
      have s_A0_11 : addf (AccMath.accVec (rowF fl tab (wL L).val (2 * t1.val + 1) (2 * k.val)) (offF fl (wL L).val (2 * t1.val + 1) (2 * k.val)) 0 11) (shapeCast S16 (pair1_next.sl.v2069 d L tab k r g1 g2 hR hin) hc16) = AccMath.accVec (rowF fl tab (wL L).val (2 * t1.val + 1) (2 * k.val)) (offF fl (wL L).val (2 * t1.val + 1) (2 * k.val)) 0 12 :=
        acc_step d L fl tab (wL L).val (2 * t1.val + 1) (2 * k.val) 0 _ hRA ⟨11, by decide⟩ ⟨0, by decide⟩ _ rfl _ hw_v2063 _ (k1_off77_form ..) _ hc16
      have s_A0_12 : addf (AccMath.accVec (rowF fl tab (wL L).val (2 * t1.val + 1) (2 * k.val)) (offF fl (wL L).val (2 * t1.val + 1) (2 * k.val)) 0 12) (shapeCast S16 (pair1_next.sl.v2105 d L tab k r g1 g2 hR hin) hc16) = AccMath.accVec (rowF fl tab (wL L).val (2 * t1.val + 1) (2 * k.val)) (offF fl (wL L).val (2 * t1.val + 1) (2 * k.val)) 0 13 :=
        acc_step d L fl tab (wL L).val (2 * t1.val + 1) (2 * k.val) 0 _ hRA ⟨12, by decide⟩ ⟨0, by decide⟩ _ rfl _ hw_v2099 _ (k1_off78_form ..) _ hc16
      have s_A0_13 : addf (AccMath.accVec (rowF fl tab (wL L).val (2 * t1.val + 1) (2 * k.val)) (offF fl (wL L).val (2 * t1.val + 1) (2 * k.val)) 0 13) (shapeCast S16 (pair1_next.sl.v2141 d L tab k r g1 g2 hR hin) hc16) = AccMath.accVec (rowF fl tab (wL L).val (2 * t1.val + 1) (2 * k.val)) (offF fl (wL L).val (2 * t1.val + 1) (2 * k.val)) 0 14 :=
        acc_step d L fl tab (wL L).val (2 * t1.val + 1) (2 * k.val) 0 _ hRA ⟨13, by decide⟩ ⟨0, by decide⟩ _ rfl _ hw_v2135 _ (k1_off79_form ..) _ hc16
      have s_A0_14 : addf (AccMath.accVec (rowF fl tab (wL L).val (2 * t1.val + 1) (2 * k.val)) (offF fl (wL L).val (2 * t1.val + 1) (2 * k.val)) 0 14) (shapeCast S16 (pair1_next.sl.v2177 d L tab k r g1 g2 hR hin) hc16) = AccMath.accVec (rowF fl tab (wL L).val (2 * t1.val + 1) (2 * k.val)) (offF fl (wL L).val (2 * t1.val + 1) (2 * k.val)) 0 15 :=
        acc_step d L fl tab (wL L).val (2 * t1.val + 1) (2 * k.val) 0 _ hRA ⟨14, by decide⟩ ⟨0, by decide⟩ _ rfl _ hw_v2171 _ (k1_off80_form ..) _ hc16
      have s_A0_15 : addf (AccMath.accVec (rowF fl tab (wL L).val (2 * t1.val + 1) (2 * k.val)) (offF fl (wL L).val (2 * t1.val + 1) (2 * k.val)) 0 15) (shapeCast S16 (pair1_next.sl.v2213 d L tab k r g1 g2 hR hin) hc16) = AccMath.accVec (rowF fl tab (wL L).val (2 * t1.val + 1) (2 * k.val)) (offF fl (wL L).val (2 * t1.val + 1) (2 * k.val)) 0 16 :=
        acc_step d L fl tab (wL L).val (2 * t1.val + 1) (2 * k.val) 0 _ hRA ⟨15, by decide⟩ ⟨0, by decide⟩ _ rfl _ hw_v2207 _ (k1_off81_form ..) _ hc16
      have s_A0_16 : addf (AccMath.accVec (rowF fl tab (wL L).val (2 * t1.val + 1) (2 * k.val)) (offF fl (wL L).val (2 * t1.val + 1) (2 * k.val)) 0 16) (shapeCast S16 (pair1_next.sl.v1673_1 d L tab k r g1 g2 hR hin) hc16) = AccMath.accVec (rowF fl tab (wL L).val (2 * t1.val + 1) (2 * k.val)) (offF fl (wL L).val (2 * t1.val + 1) (2 * k.val)) 0 17 :=
        acc_step d L fl tab (wL L).val (2 * t1.val + 1) (2 * k.val) 0 _ hRA ⟨16, by decide⟩ ⟨0, by decide⟩ _ rfl _ hw_v1667_1 _ (k1_off66_form ..) _ hc16
      have s_A0_17 : addf (AccMath.accVec (rowF fl tab (wL L).val (2 * t1.val + 1) (2 * k.val)) (offF fl (wL L).val (2 * t1.val + 1) (2 * k.val)) 0 17) (shapeCast S16 (pair1_next.sl.v1709_1 d L tab k r g1 g2 hR hin) hc16) = AccMath.accVec (rowF fl tab (wL L).val (2 * t1.val + 1) (2 * k.val)) (offF fl (wL L).val (2 * t1.val + 1) (2 * k.val)) 0 18 :=
        acc_step d L fl tab (wL L).val (2 * t1.val + 1) (2 * k.val) 0 _ hRA ⟨17, by decide⟩ ⟨0, by decide⟩ _ rfl _ hw_v1703_1 _ (k1_off67_form ..) _ hc16
      have s_A0_18 : addf (AccMath.accVec (rowF fl tab (wL L).val (2 * t1.val + 1) (2 * k.val)) (offF fl (wL L).val (2 * t1.val + 1) (2 * k.val)) 0 18) (shapeCast S16 (pair1_next.sl.v1745_1 d L tab k r g1 g2 hR hin) hc16) = AccMath.accVec (rowF fl tab (wL L).val (2 * t1.val + 1) (2 * k.val)) (offF fl (wL L).val (2 * t1.val + 1) (2 * k.val)) 0 19 :=
        acc_step d L fl tab (wL L).val (2 * t1.val + 1) (2 * k.val) 0 _ hRA ⟨18, by decide⟩ ⟨0, by decide⟩ _ rfl _ hw_v1739_1 _ (k1_off68_form ..) _ hc16
      have s_A0_19 : addf (AccMath.accVec (rowF fl tab (wL L).val (2 * t1.val + 1) (2 * k.val)) (offF fl (wL L).val (2 * t1.val + 1) (2 * k.val)) 0 19) (shapeCast S16 (pair1_next.sl.v1781_1 d L tab k r g1 g2 hR hin) hc16) = AccMath.accVec (rowF fl tab (wL L).val (2 * t1.val + 1) (2 * k.val)) (offF fl (wL L).val (2 * t1.val + 1) (2 * k.val)) 0 20 :=
        acc_step d L fl tab (wL L).val (2 * t1.val + 1) (2 * k.val) 0 _ hRA ⟨19, by decide⟩ ⟨0, by decide⟩ _ rfl _ hw_v1775_1 _ (k1_off69_form ..) _ hc16
      have s_A0_20 : addf (AccMath.accVec (rowF fl tab (wL L).val (2 * t1.val + 1) (2 * k.val)) (offF fl (wL L).val (2 * t1.val + 1) (2 * k.val)) 0 20) (shapeCast S16 (pair1_next.sl.v1817_1 d L tab k r g1 g2 hR hin) hc16) = AccMath.accVec (rowF fl tab (wL L).val (2 * t1.val + 1) (2 * k.val)) (offF fl (wL L).val (2 * t1.val + 1) (2 * k.val)) 0 21 :=
        acc_step d L fl tab (wL L).val (2 * t1.val + 1) (2 * k.val) 0 _ hRA ⟨20, by decide⟩ ⟨0, by decide⟩ _ rfl _ hw_v1811_1 _ (k1_off70_form ..) _ hc16
      have s_A0_21 : addf (AccMath.accVec (rowF fl tab (wL L).val (2 * t1.val + 1) (2 * k.val)) (offF fl (wL L).val (2 * t1.val + 1) (2 * k.val)) 0 21) (shapeCast S16 (pair1_next.sl.v1853_1 d L tab k r g1 g2 hR hin) hc16) = AccMath.accVec (rowF fl tab (wL L).val (2 * t1.val + 1) (2 * k.val)) (offF fl (wL L).val (2 * t1.val + 1) (2 * k.val)) 0 22 :=
        acc_step d L fl tab (wL L).val (2 * t1.val + 1) (2 * k.val) 0 _ hRA ⟨21, by decide⟩ ⟨0, by decide⟩ _ rfl _ hw_v1847_1 _ (k1_off71_form ..) _ hc16
      have s_A0_22 : addf (AccMath.accVec (rowF fl tab (wL L).val (2 * t1.val + 1) (2 * k.val)) (offF fl (wL L).val (2 * t1.val + 1) (2 * k.val)) 0 22) (shapeCast S16 (pair1_next.sl.v1889_1 d L tab k r g1 g2 hR hin) hc16) = AccMath.accVec (rowF fl tab (wL L).val (2 * t1.val + 1) (2 * k.val)) (offF fl (wL L).val (2 * t1.val + 1) (2 * k.val)) 0 23 :=
        acc_step d L fl tab (wL L).val (2 * t1.val + 1) (2 * k.val) 0 _ hRA ⟨22, by decide⟩ ⟨0, by decide⟩ _ rfl _ hw_v1883_1 _ (k1_off72_form ..) _ hc16
      have s_A0_23 : addf (AccMath.accVec (rowF fl tab (wL L).val (2 * t1.val + 1) (2 * k.val)) (offF fl (wL L).val (2 * t1.val + 1) (2 * k.val)) 0 23) (shapeCast S16 (pair1_next.sl.v1925_1 d L tab k r g1 g2 hR hin) hc16) = AccMath.accVec (rowF fl tab (wL L).val (2 * t1.val + 1) (2 * k.val)) (offF fl (wL L).val (2 * t1.val + 1) (2 * k.val)) 0 24 :=
        acc_step d L fl tab (wL L).val (2 * t1.val + 1) (2 * k.val) 0 _ hRA ⟨23, by decide⟩ ⟨0, by decide⟩ _ rfl _ hw_v1919_1 _ (k1_off73_form ..) _ hc16
      have s_A0_24 : addf (AccMath.accVec (rowF fl tab (wL L).val (2 * t1.val + 1) (2 * k.val)) (offF fl (wL L).val (2 * t1.val + 1) (2 * k.val)) 0 24) (shapeCast S16 (pair1_next.sl.v1961_1 d L tab k r g1 g2 hR hin) hc16) = AccMath.accVec (rowF fl tab (wL L).val (2 * t1.val + 1) (2 * k.val)) (offF fl (wL L).val (2 * t1.val + 1) (2 * k.val)) 0 25 :=
        acc_step d L fl tab (wL L).val (2 * t1.val + 1) (2 * k.val) 0 _ hRA ⟨24, by decide⟩ ⟨0, by decide⟩ _ rfl _ hw_v1955_1 _ (k1_off74_form ..) _ hc16
      have s_A0_25 : addf (AccMath.accVec (rowF fl tab (wL L).val (2 * t1.val + 1) (2 * k.val)) (offF fl (wL L).val (2 * t1.val + 1) (2 * k.val)) 0 25) (shapeCast S16 (pair1_next.sl.v1997_1 d L tab k r g1 g2 hR hin) hc16) = AccMath.accVec (rowF fl tab (wL L).val (2 * t1.val + 1) (2 * k.val)) (offF fl (wL L).val (2 * t1.val + 1) (2 * k.val)) 0 26 :=
        acc_step d L fl tab (wL L).val (2 * t1.val + 1) (2 * k.val) 0 _ hRA ⟨25, by decide⟩ ⟨0, by decide⟩ _ rfl _ hw_v1991_1 _ (k1_off75_form ..) _ hc16
      have s_A0_26 : addf (AccMath.accVec (rowF fl tab (wL L).val (2 * t1.val + 1) (2 * k.val)) (offF fl (wL L).val (2 * t1.val + 1) (2 * k.val)) 0 26) (shapeCast S16 (pair1_next.sl.v2033_1 d L tab k r g1 g2 hR hin) hc16) = AccMath.accVec (rowF fl tab (wL L).val (2 * t1.val + 1) (2 * k.val)) (offF fl (wL L).val (2 * t1.val + 1) (2 * k.val)) 0 27 :=
        acc_step d L fl tab (wL L).val (2 * t1.val + 1) (2 * k.val) 0 _ hRA ⟨26, by decide⟩ ⟨0, by decide⟩ _ rfl _ hw_v2027_1 _ (k1_off76_form ..) _ hc16
      have s_A0_27 : addf (AccMath.accVec (rowF fl tab (wL L).val (2 * t1.val + 1) (2 * k.val)) (offF fl (wL L).val (2 * t1.val + 1) (2 * k.val)) 0 27) (shapeCast S16 (pair1_next.sl.v2069_1 d L tab k r g1 g2 hR hin) hc16) = AccMath.accVec (rowF fl tab (wL L).val (2 * t1.val + 1) (2 * k.val)) (offF fl (wL L).val (2 * t1.val + 1) (2 * k.val)) 0 28 :=
        acc_step d L fl tab (wL L).val (2 * t1.val + 1) (2 * k.val) 0 _ hRA ⟨27, by decide⟩ ⟨0, by decide⟩ _ rfl _ hw_v2063_1 _ (k1_off77_form ..) _ hc16
      have s_A0_28 : addf (AccMath.accVec (rowF fl tab (wL L).val (2 * t1.val + 1) (2 * k.val)) (offF fl (wL L).val (2 * t1.val + 1) (2 * k.val)) 0 28) (shapeCast S16 (pair1_next.sl.v2105_1 d L tab k r g1 g2 hR hin) hc16) = AccMath.accVec (rowF fl tab (wL L).val (2 * t1.val + 1) (2 * k.val)) (offF fl (wL L).val (2 * t1.val + 1) (2 * k.val)) 0 29 :=
        acc_step d L fl tab (wL L).val (2 * t1.val + 1) (2 * k.val) 0 _ hRA ⟨28, by decide⟩ ⟨0, by decide⟩ _ rfl _ hw_v2099_1 _ (k1_off78_form ..) _ hc16
      have s_A0_29 : addf (AccMath.accVec (rowF fl tab (wL L).val (2 * t1.val + 1) (2 * k.val)) (offF fl (wL L).val (2 * t1.val + 1) (2 * k.val)) 0 29) (shapeCast S16 (pair1_next.sl.v2141_1 d L tab k r g1 g2 hR hin) hc16) = AccMath.accVec (rowF fl tab (wL L).val (2 * t1.val + 1) (2 * k.val)) (offF fl (wL L).val (2 * t1.val + 1) (2 * k.val)) 0 30 :=
        acc_step d L fl tab (wL L).val (2 * t1.val + 1) (2 * k.val) 0 _ hRA ⟨29, by decide⟩ ⟨0, by decide⟩ _ rfl _ hw_v2135_1 _ (k1_off79_form ..) _ hc16
      have s_A0_30 : addf (AccMath.accVec (rowF fl tab (wL L).val (2 * t1.val + 1) (2 * k.val)) (offF fl (wL L).val (2 * t1.val + 1) (2 * k.val)) 0 30) (shapeCast S16 (pair1_next.sl.v2177_1 d L tab k r g1 g2 hR hin) hc16) = AccMath.accVec (rowF fl tab (wL L).val (2 * t1.val + 1) (2 * k.val)) (offF fl (wL L).val (2 * t1.val + 1) (2 * k.val)) 0 31 :=
        acc_step d L fl tab (wL L).val (2 * t1.val + 1) (2 * k.val) 0 _ hRA ⟨30, by decide⟩ ⟨0, by decide⟩ _ rfl _ hw_v2171_1 _ (k1_off80_form ..) _ hc16
      have s_A0_31 : addf (AccMath.accVec (rowF fl tab (wL L).val (2 * t1.val + 1) (2 * k.val)) (offF fl (wL L).val (2 * t1.val + 1) (2 * k.val)) 0 31) (shapeCast S16 (pair1_next.sl.v2213_1 d L tab k r g1 g2 hR hin) hc16) = AccMath.accVec (rowF fl tab (wL L).val (2 * t1.val + 1) (2 * k.val)) (offF fl (wL L).val (2 * t1.val + 1) (2 * k.val)) 0 32 :=
        acc_step d L fl tab (wL L).val (2 * t1.val + 1) (2 * k.val) 0 _ hRA ⟨31, by decide⟩ ⟨0, by decide⟩ _ rfl _ hw_v2207_1 _ (k1_off81_form ..) _ hc16
      have s_A0_32 : addf (AccMath.accVec (rowF fl tab (wL L).val (2 * t1.val + 1) (2 * k.val)) (offF fl (wL L).val (2 * t1.val + 1) (2 * k.val)) 0 32) (shapeCast S16 (pair1_next.sl.v1673_2 d L tab k r g1 g2 hR hin) hc16) = AccMath.accVec (rowF fl tab (wL L).val (2 * t1.val + 1) (2 * k.val)) (offF fl (wL L).val (2 * t1.val + 1) (2 * k.val)) 0 33 :=
        acc_step d L fl tab (wL L).val (2 * t1.val + 1) (2 * k.val) 0 _ hRA ⟨32, by decide⟩ ⟨0, by decide⟩ _ rfl _ hw_v1667_2 _ (k1_off66_form ..) _ hc16
      have s_A0_33 : addf (AccMath.accVec (rowF fl tab (wL L).val (2 * t1.val + 1) (2 * k.val)) (offF fl (wL L).val (2 * t1.val + 1) (2 * k.val)) 0 33) (shapeCast S16 (pair1_next.sl.v1709_2 d L tab k r g1 g2 hR hin) hc16) = AccMath.accVec (rowF fl tab (wL L).val (2 * t1.val + 1) (2 * k.val)) (offF fl (wL L).val (2 * t1.val + 1) (2 * k.val)) 0 34 :=
        acc_step d L fl tab (wL L).val (2 * t1.val + 1) (2 * k.val) 0 _ hRA ⟨33, by decide⟩ ⟨0, by decide⟩ _ rfl _ hw_v1703_2 _ (k1_off67_form ..) _ hc16
      have s_A0_34 : addf (AccMath.accVec (rowF fl tab (wL L).val (2 * t1.val + 1) (2 * k.val)) (offF fl (wL L).val (2 * t1.val + 1) (2 * k.val)) 0 34) (shapeCast S16 (pair1_next.sl.v1745_2 d L tab k r g1 g2 hR hin) hc16) = AccMath.accVec (rowF fl tab (wL L).val (2 * t1.val + 1) (2 * k.val)) (offF fl (wL L).val (2 * t1.val + 1) (2 * k.val)) 0 35 :=
        acc_step d L fl tab (wL L).val (2 * t1.val + 1) (2 * k.val) 0 _ hRA ⟨34, by decide⟩ ⟨0, by decide⟩ _ rfl _ hw_v1739_2 _ (k1_off68_form ..) _ hc16
      have s_A0_35 : addf (AccMath.accVec (rowF fl tab (wL L).val (2 * t1.val + 1) (2 * k.val)) (offF fl (wL L).val (2 * t1.val + 1) (2 * k.val)) 0 35) (shapeCast S16 (pair1_next.sl.v1781_2 d L tab k r g1 g2 hR hin) hc16) = AccMath.accVec (rowF fl tab (wL L).val (2 * t1.val + 1) (2 * k.val)) (offF fl (wL L).val (2 * t1.val + 1) (2 * k.val)) 0 36 :=
        acc_step d L fl tab (wL L).val (2 * t1.val + 1) (2 * k.val) 0 _ hRA ⟨35, by decide⟩ ⟨0, by decide⟩ _ rfl _ hw_v1775_2 _ (k1_off69_form ..) _ hc16
      have s_A0_36 : addf (AccMath.accVec (rowF fl tab (wL L).val (2 * t1.val + 1) (2 * k.val)) (offF fl (wL L).val (2 * t1.val + 1) (2 * k.val)) 0 36) (shapeCast S16 (pair1_next.sl.v1817_2 d L tab k r g1 g2 hR hin) hc16) = AccMath.accVec (rowF fl tab (wL L).val (2 * t1.val + 1) (2 * k.val)) (offF fl (wL L).val (2 * t1.val + 1) (2 * k.val)) 0 37 :=
        acc_step d L fl tab (wL L).val (2 * t1.val + 1) (2 * k.val) 0 _ hRA ⟨36, by decide⟩ ⟨0, by decide⟩ _ rfl _ hw_v1811_2 _ (k1_off70_form ..) _ hc16
      have s_A0_37 : addf (AccMath.accVec (rowF fl tab (wL L).val (2 * t1.val + 1) (2 * k.val)) (offF fl (wL L).val (2 * t1.val + 1) (2 * k.val)) 0 37) (shapeCast S16 (pair1_next.sl.v1853_2 d L tab k r g1 g2 hR hin) hc16) = AccMath.accVec (rowF fl tab (wL L).val (2 * t1.val + 1) (2 * k.val)) (offF fl (wL L).val (2 * t1.val + 1) (2 * k.val)) 0 38 :=
        acc_step d L fl tab (wL L).val (2 * t1.val + 1) (2 * k.val) 0 _ hRA ⟨37, by decide⟩ ⟨0, by decide⟩ _ rfl _ hw_v1847_2 _ (k1_off71_form ..) _ hc16
      have s_A0_38 : addf (AccMath.accVec (rowF fl tab (wL L).val (2 * t1.val + 1) (2 * k.val)) (offF fl (wL L).val (2 * t1.val + 1) (2 * k.val)) 0 38) (shapeCast S16 (pair1_next.sl.v1889_2 d L tab k r g1 g2 hR hin) hc16) = AccMath.accVec (rowF fl tab (wL L).val (2 * t1.val + 1) (2 * k.val)) (offF fl (wL L).val (2 * t1.val + 1) (2 * k.val)) 0 39 :=
        acc_step d L fl tab (wL L).val (2 * t1.val + 1) (2 * k.val) 0 _ hRA ⟨38, by decide⟩ ⟨0, by decide⟩ _ rfl _ hw_v1883_2 _ (k1_off72_form ..) _ hc16
      have s_A0_39 : addf (AccMath.accVec (rowF fl tab (wL L).val (2 * t1.val + 1) (2 * k.val)) (offF fl (wL L).val (2 * t1.val + 1) (2 * k.val)) 0 39) (shapeCast S16 (pair1_next.sl.v1925_2 d L tab k r g1 g2 hR hin) hc16) = AccMath.accVec (rowF fl tab (wL L).val (2 * t1.val + 1) (2 * k.val)) (offF fl (wL L).val (2 * t1.val + 1) (2 * k.val)) 0 40 :=
        acc_step d L fl tab (wL L).val (2 * t1.val + 1) (2 * k.val) 0 _ hRA ⟨39, by decide⟩ ⟨0, by decide⟩ _ rfl _ hw_v1919_2 _ (k1_off73_form ..) _ hc16
      have s_A0_40 : addf (AccMath.accVec (rowF fl tab (wL L).val (2 * t1.val + 1) (2 * k.val)) (offF fl (wL L).val (2 * t1.val + 1) (2 * k.val)) 0 40) (shapeCast S16 (pair1_next.sl.v1961_2 d L tab k r g1 g2 hR hin) hc16) = AccMath.accVec (rowF fl tab (wL L).val (2 * t1.val + 1) (2 * k.val)) (offF fl (wL L).val (2 * t1.val + 1) (2 * k.val)) 0 41 :=
        acc_step d L fl tab (wL L).val (2 * t1.val + 1) (2 * k.val) 0 _ hRA ⟨40, by decide⟩ ⟨0, by decide⟩ _ rfl _ hw_v1955_2 _ (k1_off74_form ..) _ hc16
      have s_A0_41 : addf (AccMath.accVec (rowF fl tab (wL L).val (2 * t1.val + 1) (2 * k.val)) (offF fl (wL L).val (2 * t1.val + 1) (2 * k.val)) 0 41) (shapeCast S16 (pair1_next.sl.v1997_2 d L tab k r g1 g2 hR hin) hc16) = AccMath.accVec (rowF fl tab (wL L).val (2 * t1.val + 1) (2 * k.val)) (offF fl (wL L).val (2 * t1.val + 1) (2 * k.val)) 0 42 :=
        acc_step d L fl tab (wL L).val (2 * t1.val + 1) (2 * k.val) 0 _ hRA ⟨41, by decide⟩ ⟨0, by decide⟩ _ rfl _ hw_v1991_2 _ (k1_off75_form ..) _ hc16
      have s_A0_42 : addf (AccMath.accVec (rowF fl tab (wL L).val (2 * t1.val + 1) (2 * k.val)) (offF fl (wL L).val (2 * t1.val + 1) (2 * k.val)) 0 42) (shapeCast S16 (pair1_next.sl.v2033_2 d L tab k r g1 g2 hR hin) hc16) = AccMath.accVec (rowF fl tab (wL L).val (2 * t1.val + 1) (2 * k.val)) (offF fl (wL L).val (2 * t1.val + 1) (2 * k.val)) 0 43 :=
        acc_step d L fl tab (wL L).val (2 * t1.val + 1) (2 * k.val) 0 _ hRA ⟨42, by decide⟩ ⟨0, by decide⟩ _ rfl _ hw_v2027_2 _ (k1_off76_form ..) _ hc16
      have s_A0_43 : addf (AccMath.accVec (rowF fl tab (wL L).val (2 * t1.val + 1) (2 * k.val)) (offF fl (wL L).val (2 * t1.val + 1) (2 * k.val)) 0 43) (shapeCast S16 (pair1_next.sl.v2069_2 d L tab k r g1 g2 hR hin) hc16) = AccMath.accVec (rowF fl tab (wL L).val (2 * t1.val + 1) (2 * k.val)) (offF fl (wL L).val (2 * t1.val + 1) (2 * k.val)) 0 44 :=
        acc_step d L fl tab (wL L).val (2 * t1.val + 1) (2 * k.val) 0 _ hRA ⟨43, by decide⟩ ⟨0, by decide⟩ _ rfl _ hw_v2063_2 _ (k1_off77_form ..) _ hc16
      have s_A0_44 : addf (AccMath.accVec (rowF fl tab (wL L).val (2 * t1.val + 1) (2 * k.val)) (offF fl (wL L).val (2 * t1.val + 1) (2 * k.val)) 0 44) (shapeCast S16 (pair1_next.sl.v2105_2 d L tab k r g1 g2 hR hin) hc16) = AccMath.accVec (rowF fl tab (wL L).val (2 * t1.val + 1) (2 * k.val)) (offF fl (wL L).val (2 * t1.val + 1) (2 * k.val)) 0 45 :=
        acc_step d L fl tab (wL L).val (2 * t1.val + 1) (2 * k.val) 0 _ hRA ⟨44, by decide⟩ ⟨0, by decide⟩ _ rfl _ hw_v2099_2 _ (k1_off78_form ..) _ hc16
      have s_A0_45 : addf (AccMath.accVec (rowF fl tab (wL L).val (2 * t1.val + 1) (2 * k.val)) (offF fl (wL L).val (2 * t1.val + 1) (2 * k.val)) 0 45) (shapeCast S16 (pair1_next.sl.v2141_2 d L tab k r g1 g2 hR hin) hc16) = AccMath.accVec (rowF fl tab (wL L).val (2 * t1.val + 1) (2 * k.val)) (offF fl (wL L).val (2 * t1.val + 1) (2 * k.val)) 0 46 :=
        acc_step d L fl tab (wL L).val (2 * t1.val + 1) (2 * k.val) 0 _ hRA ⟨45, by decide⟩ ⟨0, by decide⟩ _ rfl _ hw_v2135_2 _ (k1_off79_form ..) _ hc16
      have s_A0_46 : addf (AccMath.accVec (rowF fl tab (wL L).val (2 * t1.val + 1) (2 * k.val)) (offF fl (wL L).val (2 * t1.val + 1) (2 * k.val)) 0 46) (shapeCast S16 (pair1_next.sl.v2177_2 d L tab k r g1 g2 hR hin) hc16) = AccMath.accVec (rowF fl tab (wL L).val (2 * t1.val + 1) (2 * k.val)) (offF fl (wL L).val (2 * t1.val + 1) (2 * k.val)) 0 47 :=
        acc_step d L fl tab (wL L).val (2 * t1.val + 1) (2 * k.val) 0 _ hRA ⟨46, by decide⟩ ⟨0, by decide⟩ _ rfl _ hw_v2171_2 _ (k1_off80_form ..) _ hc16
      have s_A0_47 : addf (AccMath.accVec (rowF fl tab (wL L).val (2 * t1.val + 1) (2 * k.val)) (offF fl (wL L).val (2 * t1.val + 1) (2 * k.val)) 0 47) (shapeCast S16 (pair1_next.sl.v2213_2 d L tab k r g1 g2 hR hin) hc16) = AccMath.accVec (rowF fl tab (wL L).val (2 * t1.val + 1) (2 * k.val)) (offF fl (wL L).val (2 * t1.val + 1) (2 * k.val)) 0 48 :=
        acc_step d L fl tab (wL L).val (2 * t1.val + 1) (2 * k.val) 0 _ hRA ⟨47, by decide⟩ ⟨0, by decide⟩ _ rfl _ hw_v2207_2 _ (k1_off81_form ..) _ hc16
      have s_A0_48 : addf (AccMath.accVec (rowF fl tab (wL L).val (2 * t1.val + 1) (2 * k.val)) (offF fl (wL L).val (2 * t1.val + 1) (2 * k.val)) 0 48) (shapeCast S16 (pair1_next.sl.v1462 d L tab k r g1 g2 hR hin) hc16) = AccMath.accVec (rowF fl tab (wL L).val (2 * t1.val + 1) (2 * k.val)) (offF fl (wL L).val (2 * t1.val + 1) (2 * k.val)) 0 49 :=
        acc_step d L fl tab (wL L).val (2 * t1.val + 1) (2 * k.val) 0 _ hRA ⟨48, by decide⟩ ⟨0, by decide⟩ _ rfl _ hw_v1456 _ (k1_off83_form ..) _ hc16
      have s_A0_49 : addf (AccMath.accVec (rowF fl tab (wL L).val (2 * t1.val + 1) (2 * k.val)) (offF fl (wL L).val (2 * t1.val + 1) (2 * k.val)) 0 49) (shapeCast S16 (pair1_next.sl.v1496 d L tab k r g1 g2 hR hin) hc16) = AccMath.accVec (rowF fl tab (wL L).val (2 * t1.val + 1) (2 * k.val)) (offF fl (wL L).val (2 * t1.val + 1) (2 * k.val)) 0 50 :=
        acc_step d L fl tab (wL L).val (2 * t1.val + 1) (2 * k.val) 0 _ hRA ⟨49, by decide⟩ ⟨0, by decide⟩ _ rfl _ hw_v1490 _ (k1_off84_form ..) _ hc16
      have hP_A0 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val)) (offF fl (wL L).val (2 * t1.val + 1) (2 * k.val)) 0 0) (shapeCast S16 (pair1_next.sl.v1673 d L tab k r g1 g2 hR hin) hc16)) (shapeCast S16 (pair1_next.sl.v1709 d L tab k r g1 g2 hR hin) hc16)) (shapeCast S16 (pair1_next.sl.v1745 d L tab k r g1 g2 hR hin) hc16)) (shapeCast S16 (pair1_next.sl.v1781 d L tab k r g1 g2 hR hin) hc16)) (shapeCast S16 (pair1_next.sl.v1817 d L tab k r g1 g2 hR hin) hc16)) (shapeCast S16 (pair1_next.sl.v1853 d L tab k r g1 g2 hR hin) hc16)) (shapeCast S16 (pair1_next.sl.v1889 d L tab k r g1 g2 hR hin) hc16)) (shapeCast S16 (pair1_next.sl.v1925 d L tab k r g1 g2 hR hin) hc16)) (shapeCast S16 (pair1_next.sl.v1961 d L tab k r g1 g2 hR hin) hc16)) (shapeCast S16 (pair1_next.sl.v1997 d L tab k r g1 g2 hR hin) hc16)) (shapeCast S16 (pair1_next.sl.v2033 d L tab k r g1 g2 hR hin) hc16)) (shapeCast S16 (pair1_next.sl.v2069 d L tab k r g1 g2 hR hin) hc16)) (shapeCast S16 (pair1_next.sl.v2105 d L tab k r g1 g2 hR hin) hc16)) (shapeCast S16 (pair1_next.sl.v2141 d L tab k r g1 g2 hR hin) hc16)) (shapeCast S16 (pair1_next.sl.v2177 d L tab k r g1 g2 hR hin) hc16)) (shapeCast S16 (pair1_next.sl.v2213 d L tab k r g1 g2 hR hin) hc16)) (shapeCast S16 (pair1_next.sl.v1673_1 d L tab k r g1 g2 hR hin) hc16)) (shapeCast S16 (pair1_next.sl.v1709_1 d L tab k r g1 g2 hR hin) hc16)) (shapeCast S16 (pair1_next.sl.v1745_1 d L tab k r g1 g2 hR hin) hc16)) (shapeCast S16 (pair1_next.sl.v1781_1 d L tab k r g1 g2 hR hin) hc16)) (shapeCast S16 (pair1_next.sl.v1817_1 d L tab k r g1 g2 hR hin) hc16)) (shapeCast S16 (pair1_next.sl.v1853_1 d L tab k r g1 g2 hR hin) hc16)) (shapeCast S16 (pair1_next.sl.v1889_1 d L tab k r g1 g2 hR hin) hc16)) (shapeCast S16 (pair1_next.sl.v1925_1 d L tab k r g1 g2 hR hin) hc16)) (shapeCast S16 (pair1_next.sl.v1961_1 d L tab k r g1 g2 hR hin) hc16)) (shapeCast S16 (pair1_next.sl.v1997_1 d L tab k r g1 g2 hR hin) hc16)) (shapeCast S16 (pair1_next.sl.v2033_1 d L tab k r g1 g2 hR hin) hc16)) (shapeCast S16 (pair1_next.sl.v2069_1 d L tab k r g1 g2 hR hin) hc16)) (shapeCast S16 (pair1_next.sl.v2105_1 d L tab k r g1 g2 hR hin) hc16)) (shapeCast S16 (pair1_next.sl.v2141_1 d L tab k r g1 g2 hR hin) hc16)) (shapeCast S16 (pair1_next.sl.v2177_1 d L tab k r g1 g2 hR hin) hc16)) (shapeCast S16 (pair1_next.sl.v2213_1 d L tab k r g1 g2 hR hin) hc16)) (shapeCast S16 (pair1_next.sl.v1673_2 d L tab k r g1 g2 hR hin) hc16)) (shapeCast S16 (pair1_next.sl.v1709_2 d L tab k r g1 g2 hR hin) hc16)) (shapeCast S16 (pair1_next.sl.v1745_2 d L tab k r g1 g2 hR hin) hc16)) (shapeCast S16 (pair1_next.sl.v1781_2 d L tab k r g1 g2 hR hin) hc16)) (shapeCast S16 (pair1_next.sl.v1817_2 d L tab k r g1 g2 hR hin) hc16)) (shapeCast S16 (pair1_next.sl.v1853_2 d L tab k r g1 g2 hR hin) hc16)) (shapeCast S16 (pair1_next.sl.v1889_2 d L tab k r g1 g2 hR hin) hc16)) (shapeCast S16 (pair1_next.sl.v1925_2 d L tab k r g1 g2 hR hin) hc16)) (shapeCast S16 (pair1_next.sl.v1961_2 d L tab k r g1 g2 hR hin) hc16)) (shapeCast S16 (pair1_next.sl.v1997_2 d L tab k r g1 g2 hR hin) hc16)) (shapeCast S16 (pair1_next.sl.v2033_2 d L tab k r g1 g2 hR hin) hc16)) (shapeCast S16 (pair1_next.sl.v2069_2 d L tab k r g1 g2 hR hin) hc16)) (shapeCast S16 (pair1_next.sl.v2105_2 d L tab k r g1 g2 hR hin) hc16)) (shapeCast S16 (pair1_next.sl.v2141_2 d L tab k r g1 g2 hR hin) hc16)) (shapeCast S16 (pair1_next.sl.v2177_2 d L tab k r g1 g2 hR hin) hc16)) (shapeCast S16 (pair1_next.sl.v2213_2 d L tab k r g1 g2 hR hin) hc16)) (shapeCast S16 (pair1_next.sl.v1462 d L tab k r g1 g2 hR hin) hc16)) (shapeCast S16 (pair1_next.sl.v1496 d L tab k r g1 g2 hR hin) hc16)) hc1 x = Spec.bagPartial fl tab (128 * (wL L).val + 16 * (2 * t1.val + 1) + (2 * k.val)) (16 * 0 + (x 2).val) 50 := fun x => by
        rw [s_A0_0, s_A0_1, s_A0_2, s_A0_3, s_A0_4, s_A0_5, s_A0_6, s_A0_7, s_A0_8, s_A0_9, s_A0_10, s_A0_11, s_A0_12, s_A0_13, s_A0_14, s_A0_15, s_A0_16, s_A0_17, s_A0_18, s_A0_19, s_A0_20, s_A0_21, s_A0_22, s_A0_23, s_A0_24, s_A0_25, s_A0_26, s_A0_27, s_A0_28, s_A0_29, s_A0_30, s_A0_31, s_A0_32, s_A0_33, s_A0_34, s_A0_35, s_A0_36, s_A0_37, s_A0_38, s_A0_39, s_A0_40, s_A0_41, s_A0_42, s_A0_43, s_A0_44, s_A0_45, s_A0_46, s_A0_47, s_A0_48, s_A0_49]
        exact payload_ok fl tab (wL L).val (2 * t1.val + 1) (2 * k.val) ⟨0, by decide⟩ hc1 x
      have s_A1_0 : addf (AccMath.accVec (rowF fl tab (wL L).val (2 * t1.val + 1) (2 * k.val)) (offF fl (wL L).val (2 * t1.val + 1) (2 * k.val)) 1 0) (shapeCast S16 (pair1_next.sl.v1681 d L tab k r g1 g2 hR hin) hc16) = AccMath.accVec (rowF fl tab (wL L).val (2 * t1.val + 1) (2 * k.val)) (offF fl (wL L).val (2 * t1.val + 1) (2 * k.val)) 1 1 :=
        acc_step d L fl tab (wL L).val (2 * t1.val + 1) (2 * k.val) 0 _ hRA ⟨0, by decide⟩ ⟨1, by decide⟩ _ rfl _ hw_v1667 _ (k1_off66_form ..) _ hc16
      have s_A1_1 : addf (AccMath.accVec (rowF fl tab (wL L).val (2 * t1.val + 1) (2 * k.val)) (offF fl (wL L).val (2 * t1.val + 1) (2 * k.val)) 1 1) (shapeCast S16 (pair1_next.sl.v1717 d L tab k r g1 g2 hR hin) hc16) = AccMath.accVec (rowF fl tab (wL L).val (2 * t1.val + 1) (2 * k.val)) (offF fl (wL L).val (2 * t1.val + 1) (2 * k.val)) 1 2 :=
        acc_step d L fl tab (wL L).val (2 * t1.val + 1) (2 * k.val) 0 _ hRA ⟨1, by decide⟩ ⟨1, by decide⟩ _ rfl _ hw_v1703 _ (k1_off67_form ..) _ hc16
      have s_A1_2 : addf (AccMath.accVec (rowF fl tab (wL L).val (2 * t1.val + 1) (2 * k.val)) (offF fl (wL L).val (2 * t1.val + 1) (2 * k.val)) 1 2) (shapeCast S16 (pair1_next.sl.v1753 d L tab k r g1 g2 hR hin) hc16) = AccMath.accVec (rowF fl tab (wL L).val (2 * t1.val + 1) (2 * k.val)) (offF fl (wL L).val (2 * t1.val + 1) (2 * k.val)) 1 3 :=
        acc_step d L fl tab (wL L).val (2 * t1.val + 1) (2 * k.val) 0 _ hRA ⟨2, by decide⟩ ⟨1, by decide⟩ _ rfl _ hw_v1739 _ (k1_off68_form ..) _ hc16
      have s_A1_3 : addf (AccMath.accVec (rowF fl tab (wL L).val (2 * t1.val + 1) (2 * k.val)) (offF fl (wL L).val (2 * t1.val + 1) (2 * k.val)) 1 3) (shapeCast S16 (pair1_next.sl.v1789 d L tab k r g1 g2 hR hin) hc16) = AccMath.accVec (rowF fl tab (wL L).val (2 * t1.val + 1) (2 * k.val)) (offF fl (wL L).val (2 * t1.val + 1) (2 * k.val)) 1 4 :=
        acc_step d L fl tab (wL L).val (2 * t1.val + 1) (2 * k.val) 0 _ hRA ⟨3, by decide⟩ ⟨1, by decide⟩ _ rfl _ hw_v1775 _ (k1_off69_form ..) _ hc16
      have s_A1_4 : addf (AccMath.accVec (rowF fl tab (wL L).val (2 * t1.val + 1) (2 * k.val)) (offF fl (wL L).val (2 * t1.val + 1) (2 * k.val)) 1 4) (shapeCast S16 (pair1_next.sl.v1825 d L tab k r g1 g2 hR hin) hc16) = AccMath.accVec (rowF fl tab (wL L).val (2 * t1.val + 1) (2 * k.val)) (offF fl (wL L).val (2 * t1.val + 1) (2 * k.val)) 1 5 :=
        acc_step d L fl tab (wL L).val (2 * t1.val + 1) (2 * k.val) 0 _ hRA ⟨4, by decide⟩ ⟨1, by decide⟩ _ rfl _ hw_v1811 _ (k1_off70_form ..) _ hc16
      have s_A1_5 : addf (AccMath.accVec (rowF fl tab (wL L).val (2 * t1.val + 1) (2 * k.val)) (offF fl (wL L).val (2 * t1.val + 1) (2 * k.val)) 1 5) (shapeCast S16 (pair1_next.sl.v1861 d L tab k r g1 g2 hR hin) hc16) = AccMath.accVec (rowF fl tab (wL L).val (2 * t1.val + 1) (2 * k.val)) (offF fl (wL L).val (2 * t1.val + 1) (2 * k.val)) 1 6 :=
        acc_step d L fl tab (wL L).val (2 * t1.val + 1) (2 * k.val) 0 _ hRA ⟨5, by decide⟩ ⟨1, by decide⟩ _ rfl _ hw_v1847 _ (k1_off71_form ..) _ hc16
      have s_A1_6 : addf (AccMath.accVec (rowF fl tab (wL L).val (2 * t1.val + 1) (2 * k.val)) (offF fl (wL L).val (2 * t1.val + 1) (2 * k.val)) 1 6) (shapeCast S16 (pair1_next.sl.v1897 d L tab k r g1 g2 hR hin) hc16) = AccMath.accVec (rowF fl tab (wL L).val (2 * t1.val + 1) (2 * k.val)) (offF fl (wL L).val (2 * t1.val + 1) (2 * k.val)) 1 7 :=
        acc_step d L fl tab (wL L).val (2 * t1.val + 1) (2 * k.val) 0 _ hRA ⟨6, by decide⟩ ⟨1, by decide⟩ _ rfl _ hw_v1883 _ (k1_off72_form ..) _ hc16
      have s_A1_7 : addf (AccMath.accVec (rowF fl tab (wL L).val (2 * t1.val + 1) (2 * k.val)) (offF fl (wL L).val (2 * t1.val + 1) (2 * k.val)) 1 7) (shapeCast S16 (pair1_next.sl.v1933 d L tab k r g1 g2 hR hin) hc16) = AccMath.accVec (rowF fl tab (wL L).val (2 * t1.val + 1) (2 * k.val)) (offF fl (wL L).val (2 * t1.val + 1) (2 * k.val)) 1 8 :=
        acc_step d L fl tab (wL L).val (2 * t1.val + 1) (2 * k.val) 0 _ hRA ⟨7, by decide⟩ ⟨1, by decide⟩ _ rfl _ hw_v1919 _ (k1_off73_form ..) _ hc16
      have s_A1_8 : addf (AccMath.accVec (rowF fl tab (wL L).val (2 * t1.val + 1) (2 * k.val)) (offF fl (wL L).val (2 * t1.val + 1) (2 * k.val)) 1 8) (shapeCast S16 (pair1_next.sl.v1969 d L tab k r g1 g2 hR hin) hc16) = AccMath.accVec (rowF fl tab (wL L).val (2 * t1.val + 1) (2 * k.val)) (offF fl (wL L).val (2 * t1.val + 1) (2 * k.val)) 1 9 :=
        acc_step d L fl tab (wL L).val (2 * t1.val + 1) (2 * k.val) 0 _ hRA ⟨8, by decide⟩ ⟨1, by decide⟩ _ rfl _ hw_v1955 _ (k1_off74_form ..) _ hc16
      have s_A1_9 : addf (AccMath.accVec (rowF fl tab (wL L).val (2 * t1.val + 1) (2 * k.val)) (offF fl (wL L).val (2 * t1.val + 1) (2 * k.val)) 1 9) (shapeCast S16 (pair1_next.sl.v2005 d L tab k r g1 g2 hR hin) hc16) = AccMath.accVec (rowF fl tab (wL L).val (2 * t1.val + 1) (2 * k.val)) (offF fl (wL L).val (2 * t1.val + 1) (2 * k.val)) 1 10 :=
        acc_step d L fl tab (wL L).val (2 * t1.val + 1) (2 * k.val) 0 _ hRA ⟨9, by decide⟩ ⟨1, by decide⟩ _ rfl _ hw_v1991 _ (k1_off75_form ..) _ hc16
      have s_A1_10 : addf (AccMath.accVec (rowF fl tab (wL L).val (2 * t1.val + 1) (2 * k.val)) (offF fl (wL L).val (2 * t1.val + 1) (2 * k.val)) 1 10) (shapeCast S16 (pair1_next.sl.v2041 d L tab k r g1 g2 hR hin) hc16) = AccMath.accVec (rowF fl tab (wL L).val (2 * t1.val + 1) (2 * k.val)) (offF fl (wL L).val (2 * t1.val + 1) (2 * k.val)) 1 11 :=
        acc_step d L fl tab (wL L).val (2 * t1.val + 1) (2 * k.val) 0 _ hRA ⟨10, by decide⟩ ⟨1, by decide⟩ _ rfl _ hw_v2027 _ (k1_off76_form ..) _ hc16
      have s_A1_11 : addf (AccMath.accVec (rowF fl tab (wL L).val (2 * t1.val + 1) (2 * k.val)) (offF fl (wL L).val (2 * t1.val + 1) (2 * k.val)) 1 11) (shapeCast S16 (pair1_next.sl.v2077 d L tab k r g1 g2 hR hin) hc16) = AccMath.accVec (rowF fl tab (wL L).val (2 * t1.val + 1) (2 * k.val)) (offF fl (wL L).val (2 * t1.val + 1) (2 * k.val)) 1 12 :=
        acc_step d L fl tab (wL L).val (2 * t1.val + 1) (2 * k.val) 0 _ hRA ⟨11, by decide⟩ ⟨1, by decide⟩ _ rfl _ hw_v2063 _ (k1_off77_form ..) _ hc16
      have s_A1_12 : addf (AccMath.accVec (rowF fl tab (wL L).val (2 * t1.val + 1) (2 * k.val)) (offF fl (wL L).val (2 * t1.val + 1) (2 * k.val)) 1 12) (shapeCast S16 (pair1_next.sl.v2113 d L tab k r g1 g2 hR hin) hc16) = AccMath.accVec (rowF fl tab (wL L).val (2 * t1.val + 1) (2 * k.val)) (offF fl (wL L).val (2 * t1.val + 1) (2 * k.val)) 1 13 :=
        acc_step d L fl tab (wL L).val (2 * t1.val + 1) (2 * k.val) 0 _ hRA ⟨12, by decide⟩ ⟨1, by decide⟩ _ rfl _ hw_v2099 _ (k1_off78_form ..) _ hc16
      have s_A1_13 : addf (AccMath.accVec (rowF fl tab (wL L).val (2 * t1.val + 1) (2 * k.val)) (offF fl (wL L).val (2 * t1.val + 1) (2 * k.val)) 1 13) (shapeCast S16 (pair1_next.sl.v2149 d L tab k r g1 g2 hR hin) hc16) = AccMath.accVec (rowF fl tab (wL L).val (2 * t1.val + 1) (2 * k.val)) (offF fl (wL L).val (2 * t1.val + 1) (2 * k.val)) 1 14 :=
        acc_step d L fl tab (wL L).val (2 * t1.val + 1) (2 * k.val) 0 _ hRA ⟨13, by decide⟩ ⟨1, by decide⟩ _ rfl _ hw_v2135 _ (k1_off79_form ..) _ hc16
      have s_A1_14 : addf (AccMath.accVec (rowF fl tab (wL L).val (2 * t1.val + 1) (2 * k.val)) (offF fl (wL L).val (2 * t1.val + 1) (2 * k.val)) 1 14) (shapeCast S16 (pair1_next.sl.v2185 d L tab k r g1 g2 hR hin) hc16) = AccMath.accVec (rowF fl tab (wL L).val (2 * t1.val + 1) (2 * k.val)) (offF fl (wL L).val (2 * t1.val + 1) (2 * k.val)) 1 15 :=
        acc_step d L fl tab (wL L).val (2 * t1.val + 1) (2 * k.val) 0 _ hRA ⟨14, by decide⟩ ⟨1, by decide⟩ _ rfl _ hw_v2171 _ (k1_off80_form ..) _ hc16
      have s_A1_15 : addf (AccMath.accVec (rowF fl tab (wL L).val (2 * t1.val + 1) (2 * k.val)) (offF fl (wL L).val (2 * t1.val + 1) (2 * k.val)) 1 15) (shapeCast S16 (pair1_next.sl.v2221 d L tab k r g1 g2 hR hin) hc16) = AccMath.accVec (rowF fl tab (wL L).val (2 * t1.val + 1) (2 * k.val)) (offF fl (wL L).val (2 * t1.val + 1) (2 * k.val)) 1 16 :=
        acc_step d L fl tab (wL L).val (2 * t1.val + 1) (2 * k.val) 0 _ hRA ⟨15, by decide⟩ ⟨1, by decide⟩ _ rfl _ hw_v2207 _ (k1_off81_form ..) _ hc16
      have s_A1_16 : addf (AccMath.accVec (rowF fl tab (wL L).val (2 * t1.val + 1) (2 * k.val)) (offF fl (wL L).val (2 * t1.val + 1) (2 * k.val)) 1 16) (shapeCast S16 (pair1_next.sl.v1681_1 d L tab k r g1 g2 hR hin) hc16) = AccMath.accVec (rowF fl tab (wL L).val (2 * t1.val + 1) (2 * k.val)) (offF fl (wL L).val (2 * t1.val + 1) (2 * k.val)) 1 17 :=
        acc_step d L fl tab (wL L).val (2 * t1.val + 1) (2 * k.val) 0 _ hRA ⟨16, by decide⟩ ⟨1, by decide⟩ _ rfl _ hw_v1667_1 _ (k1_off66_form ..) _ hc16
      have s_A1_17 : addf (AccMath.accVec (rowF fl tab (wL L).val (2 * t1.val + 1) (2 * k.val)) (offF fl (wL L).val (2 * t1.val + 1) (2 * k.val)) 1 17) (shapeCast S16 (pair1_next.sl.v1717_1 d L tab k r g1 g2 hR hin) hc16) = AccMath.accVec (rowF fl tab (wL L).val (2 * t1.val + 1) (2 * k.val)) (offF fl (wL L).val (2 * t1.val + 1) (2 * k.val)) 1 18 :=
        acc_step d L fl tab (wL L).val (2 * t1.val + 1) (2 * k.val) 0 _ hRA ⟨17, by decide⟩ ⟨1, by decide⟩ _ rfl _ hw_v1703_1 _ (k1_off67_form ..) _ hc16
      have s_A1_18 : addf (AccMath.accVec (rowF fl tab (wL L).val (2 * t1.val + 1) (2 * k.val)) (offF fl (wL L).val (2 * t1.val + 1) (2 * k.val)) 1 18) (shapeCast S16 (pair1_next.sl.v1753_1 d L tab k r g1 g2 hR hin) hc16) = AccMath.accVec (rowF fl tab (wL L).val (2 * t1.val + 1) (2 * k.val)) (offF fl (wL L).val (2 * t1.val + 1) (2 * k.val)) 1 19 :=
        acc_step d L fl tab (wL L).val (2 * t1.val + 1) (2 * k.val) 0 _ hRA ⟨18, by decide⟩ ⟨1, by decide⟩ _ rfl _ hw_v1739_1 _ (k1_off68_form ..) _ hc16
      have s_A1_19 : addf (AccMath.accVec (rowF fl tab (wL L).val (2 * t1.val + 1) (2 * k.val)) (offF fl (wL L).val (2 * t1.val + 1) (2 * k.val)) 1 19) (shapeCast S16 (pair1_next.sl.v1789_1 d L tab k r g1 g2 hR hin) hc16) = AccMath.accVec (rowF fl tab (wL L).val (2 * t1.val + 1) (2 * k.val)) (offF fl (wL L).val (2 * t1.val + 1) (2 * k.val)) 1 20 :=
        acc_step d L fl tab (wL L).val (2 * t1.val + 1) (2 * k.val) 0 _ hRA ⟨19, by decide⟩ ⟨1, by decide⟩ _ rfl _ hw_v1775_1 _ (k1_off69_form ..) _ hc16
      have s_A1_20 : addf (AccMath.accVec (rowF fl tab (wL L).val (2 * t1.val + 1) (2 * k.val)) (offF fl (wL L).val (2 * t1.val + 1) (2 * k.val)) 1 20) (shapeCast S16 (pair1_next.sl.v1825_1 d L tab k r g1 g2 hR hin) hc16) = AccMath.accVec (rowF fl tab (wL L).val (2 * t1.val + 1) (2 * k.val)) (offF fl (wL L).val (2 * t1.val + 1) (2 * k.val)) 1 21 :=
        acc_step d L fl tab (wL L).val (2 * t1.val + 1) (2 * k.val) 0 _ hRA ⟨20, by decide⟩ ⟨1, by decide⟩ _ rfl _ hw_v1811_1 _ (k1_off70_form ..) _ hc16
      have s_A1_21 : addf (AccMath.accVec (rowF fl tab (wL L).val (2 * t1.val + 1) (2 * k.val)) (offF fl (wL L).val (2 * t1.val + 1) (2 * k.val)) 1 21) (shapeCast S16 (pair1_next.sl.v1861_1 d L tab k r g1 g2 hR hin) hc16) = AccMath.accVec (rowF fl tab (wL L).val (2 * t1.val + 1) (2 * k.val)) (offF fl (wL L).val (2 * t1.val + 1) (2 * k.val)) 1 22 :=
        acc_step d L fl tab (wL L).val (2 * t1.val + 1) (2 * k.val) 0 _ hRA ⟨21, by decide⟩ ⟨1, by decide⟩ _ rfl _ hw_v1847_1 _ (k1_off71_form ..) _ hc16
      have s_A1_22 : addf (AccMath.accVec (rowF fl tab (wL L).val (2 * t1.val + 1) (2 * k.val)) (offF fl (wL L).val (2 * t1.val + 1) (2 * k.val)) 1 22) (shapeCast S16 (pair1_next.sl.v1897_1 d L tab k r g1 g2 hR hin) hc16) = AccMath.accVec (rowF fl tab (wL L).val (2 * t1.val + 1) (2 * k.val)) (offF fl (wL L).val (2 * t1.val + 1) (2 * k.val)) 1 23 :=
        acc_step d L fl tab (wL L).val (2 * t1.val + 1) (2 * k.val) 0 _ hRA ⟨22, by decide⟩ ⟨1, by decide⟩ _ rfl _ hw_v1883_1 _ (k1_off72_form ..) _ hc16
      have s_A1_23 : addf (AccMath.accVec (rowF fl tab (wL L).val (2 * t1.val + 1) (2 * k.val)) (offF fl (wL L).val (2 * t1.val + 1) (2 * k.val)) 1 23) (shapeCast S16 (pair1_next.sl.v1933_1 d L tab k r g1 g2 hR hin) hc16) = AccMath.accVec (rowF fl tab (wL L).val (2 * t1.val + 1) (2 * k.val)) (offF fl (wL L).val (2 * t1.val + 1) (2 * k.val)) 1 24 :=
        acc_step d L fl tab (wL L).val (2 * t1.val + 1) (2 * k.val) 0 _ hRA ⟨23, by decide⟩ ⟨1, by decide⟩ _ rfl _ hw_v1919_1 _ (k1_off73_form ..) _ hc16
      have s_A1_24 : addf (AccMath.accVec (rowF fl tab (wL L).val (2 * t1.val + 1) (2 * k.val)) (offF fl (wL L).val (2 * t1.val + 1) (2 * k.val)) 1 24) (shapeCast S16 (pair1_next.sl.v1969_1 d L tab k r g1 g2 hR hin) hc16) = AccMath.accVec (rowF fl tab (wL L).val (2 * t1.val + 1) (2 * k.val)) (offF fl (wL L).val (2 * t1.val + 1) (2 * k.val)) 1 25 :=
        acc_step d L fl tab (wL L).val (2 * t1.val + 1) (2 * k.val) 0 _ hRA ⟨24, by decide⟩ ⟨1, by decide⟩ _ rfl _ hw_v1955_1 _ (k1_off74_form ..) _ hc16
      have s_A1_25 : addf (AccMath.accVec (rowF fl tab (wL L).val (2 * t1.val + 1) (2 * k.val)) (offF fl (wL L).val (2 * t1.val + 1) (2 * k.val)) 1 25) (shapeCast S16 (pair1_next.sl.v2005_1 d L tab k r g1 g2 hR hin) hc16) = AccMath.accVec (rowF fl tab (wL L).val (2 * t1.val + 1) (2 * k.val)) (offF fl (wL L).val (2 * t1.val + 1) (2 * k.val)) 1 26 :=
        acc_step d L fl tab (wL L).val (2 * t1.val + 1) (2 * k.val) 0 _ hRA ⟨25, by decide⟩ ⟨1, by decide⟩ _ rfl _ hw_v1991_1 _ (k1_off75_form ..) _ hc16
      have s_A1_26 : addf (AccMath.accVec (rowF fl tab (wL L).val (2 * t1.val + 1) (2 * k.val)) (offF fl (wL L).val (2 * t1.val + 1) (2 * k.val)) 1 26) (shapeCast S16 (pair1_next.sl.v2041_1 d L tab k r g1 g2 hR hin) hc16) = AccMath.accVec (rowF fl tab (wL L).val (2 * t1.val + 1) (2 * k.val)) (offF fl (wL L).val (2 * t1.val + 1) (2 * k.val)) 1 27 :=
        acc_step d L fl tab (wL L).val (2 * t1.val + 1) (2 * k.val) 0 _ hRA ⟨26, by decide⟩ ⟨1, by decide⟩ _ rfl _ hw_v2027_1 _ (k1_off76_form ..) _ hc16
      have s_A1_27 : addf (AccMath.accVec (rowF fl tab (wL L).val (2 * t1.val + 1) (2 * k.val)) (offF fl (wL L).val (2 * t1.val + 1) (2 * k.val)) 1 27) (shapeCast S16 (pair1_next.sl.v2077_1 d L tab k r g1 g2 hR hin) hc16) = AccMath.accVec (rowF fl tab (wL L).val (2 * t1.val + 1) (2 * k.val)) (offF fl (wL L).val (2 * t1.val + 1) (2 * k.val)) 1 28 :=
        acc_step d L fl tab (wL L).val (2 * t1.val + 1) (2 * k.val) 0 _ hRA ⟨27, by decide⟩ ⟨1, by decide⟩ _ rfl _ hw_v2063_1 _ (k1_off77_form ..) _ hc16
      have s_A1_28 : addf (AccMath.accVec (rowF fl tab (wL L).val (2 * t1.val + 1) (2 * k.val)) (offF fl (wL L).val (2 * t1.val + 1) (2 * k.val)) 1 28) (shapeCast S16 (pair1_next.sl.v2113_1 d L tab k r g1 g2 hR hin) hc16) = AccMath.accVec (rowF fl tab (wL L).val (2 * t1.val + 1) (2 * k.val)) (offF fl (wL L).val (2 * t1.val + 1) (2 * k.val)) 1 29 :=
        acc_step d L fl tab (wL L).val (2 * t1.val + 1) (2 * k.val) 0 _ hRA ⟨28, by decide⟩ ⟨1, by decide⟩ _ rfl _ hw_v2099_1 _ (k1_off78_form ..) _ hc16
      have s_A1_29 : addf (AccMath.accVec (rowF fl tab (wL L).val (2 * t1.val + 1) (2 * k.val)) (offF fl (wL L).val (2 * t1.val + 1) (2 * k.val)) 1 29) (shapeCast S16 (pair1_next.sl.v2149_1 d L tab k r g1 g2 hR hin) hc16) = AccMath.accVec (rowF fl tab (wL L).val (2 * t1.val + 1) (2 * k.val)) (offF fl (wL L).val (2 * t1.val + 1) (2 * k.val)) 1 30 :=
        acc_step d L fl tab (wL L).val (2 * t1.val + 1) (2 * k.val) 0 _ hRA ⟨29, by decide⟩ ⟨1, by decide⟩ _ rfl _ hw_v2135_1 _ (k1_off79_form ..) _ hc16
      have s_A1_30 : addf (AccMath.accVec (rowF fl tab (wL L).val (2 * t1.val + 1) (2 * k.val)) (offF fl (wL L).val (2 * t1.val + 1) (2 * k.val)) 1 30) (shapeCast S16 (pair1_next.sl.v2185_1 d L tab k r g1 g2 hR hin) hc16) = AccMath.accVec (rowF fl tab (wL L).val (2 * t1.val + 1) (2 * k.val)) (offF fl (wL L).val (2 * t1.val + 1) (2 * k.val)) 1 31 :=
        acc_step d L fl tab (wL L).val (2 * t1.val + 1) (2 * k.val) 0 _ hRA ⟨30, by decide⟩ ⟨1, by decide⟩ _ rfl _ hw_v2171_1 _ (k1_off80_form ..) _ hc16
      have s_A1_31 : addf (AccMath.accVec (rowF fl tab (wL L).val (2 * t1.val + 1) (2 * k.val)) (offF fl (wL L).val (2 * t1.val + 1) (2 * k.val)) 1 31) (shapeCast S16 (pair1_next.sl.v2221_1 d L tab k r g1 g2 hR hin) hc16) = AccMath.accVec (rowF fl tab (wL L).val (2 * t1.val + 1) (2 * k.val)) (offF fl (wL L).val (2 * t1.val + 1) (2 * k.val)) 1 32 :=
        acc_step d L fl tab (wL L).val (2 * t1.val + 1) (2 * k.val) 0 _ hRA ⟨31, by decide⟩ ⟨1, by decide⟩ _ rfl _ hw_v2207_1 _ (k1_off81_form ..) _ hc16
      have s_A1_32 : addf (AccMath.accVec (rowF fl tab (wL L).val (2 * t1.val + 1) (2 * k.val)) (offF fl (wL L).val (2 * t1.val + 1) (2 * k.val)) 1 32) (shapeCast S16 (pair1_next.sl.v1681_2 d L tab k r g1 g2 hR hin) hc16) = AccMath.accVec (rowF fl tab (wL L).val (2 * t1.val + 1) (2 * k.val)) (offF fl (wL L).val (2 * t1.val + 1) (2 * k.val)) 1 33 :=
        acc_step d L fl tab (wL L).val (2 * t1.val + 1) (2 * k.val) 0 _ hRA ⟨32, by decide⟩ ⟨1, by decide⟩ _ rfl _ hw_v1667_2 _ (k1_off66_form ..) _ hc16
      have s_A1_33 : addf (AccMath.accVec (rowF fl tab (wL L).val (2 * t1.val + 1) (2 * k.val)) (offF fl (wL L).val (2 * t1.val + 1) (2 * k.val)) 1 33) (shapeCast S16 (pair1_next.sl.v1717_2 d L tab k r g1 g2 hR hin) hc16) = AccMath.accVec (rowF fl tab (wL L).val (2 * t1.val + 1) (2 * k.val)) (offF fl (wL L).val (2 * t1.val + 1) (2 * k.val)) 1 34 :=
        acc_step d L fl tab (wL L).val (2 * t1.val + 1) (2 * k.val) 0 _ hRA ⟨33, by decide⟩ ⟨1, by decide⟩ _ rfl _ hw_v1703_2 _ (k1_off67_form ..) _ hc16
      have s_A1_34 : addf (AccMath.accVec (rowF fl tab (wL L).val (2 * t1.val + 1) (2 * k.val)) (offF fl (wL L).val (2 * t1.val + 1) (2 * k.val)) 1 34) (shapeCast S16 (pair1_next.sl.v1753_2 d L tab k r g1 g2 hR hin) hc16) = AccMath.accVec (rowF fl tab (wL L).val (2 * t1.val + 1) (2 * k.val)) (offF fl (wL L).val (2 * t1.val + 1) (2 * k.val)) 1 35 :=
        acc_step d L fl tab (wL L).val (2 * t1.val + 1) (2 * k.val) 0 _ hRA ⟨34, by decide⟩ ⟨1, by decide⟩ _ rfl _ hw_v1739_2 _ (k1_off68_form ..) _ hc16
      have s_A1_35 : addf (AccMath.accVec (rowF fl tab (wL L).val (2 * t1.val + 1) (2 * k.val)) (offF fl (wL L).val (2 * t1.val + 1) (2 * k.val)) 1 35) (shapeCast S16 (pair1_next.sl.v1789_2 d L tab k r g1 g2 hR hin) hc16) = AccMath.accVec (rowF fl tab (wL L).val (2 * t1.val + 1) (2 * k.val)) (offF fl (wL L).val (2 * t1.val + 1) (2 * k.val)) 1 36 :=
        acc_step d L fl tab (wL L).val (2 * t1.val + 1) (2 * k.val) 0 _ hRA ⟨35, by decide⟩ ⟨1, by decide⟩ _ rfl _ hw_v1775_2 _ (k1_off69_form ..) _ hc16
      have s_A1_36 : addf (AccMath.accVec (rowF fl tab (wL L).val (2 * t1.val + 1) (2 * k.val)) (offF fl (wL L).val (2 * t1.val + 1) (2 * k.val)) 1 36) (shapeCast S16 (pair1_next.sl.v1825_2 d L tab k r g1 g2 hR hin) hc16) = AccMath.accVec (rowF fl tab (wL L).val (2 * t1.val + 1) (2 * k.val)) (offF fl (wL L).val (2 * t1.val + 1) (2 * k.val)) 1 37 :=
        acc_step d L fl tab (wL L).val (2 * t1.val + 1) (2 * k.val) 0 _ hRA ⟨36, by decide⟩ ⟨1, by decide⟩ _ rfl _ hw_v1811_2 _ (k1_off70_form ..) _ hc16
      have s_A1_37 : addf (AccMath.accVec (rowF fl tab (wL L).val (2 * t1.val + 1) (2 * k.val)) (offF fl (wL L).val (2 * t1.val + 1) (2 * k.val)) 1 37) (shapeCast S16 (pair1_next.sl.v1861_2 d L tab k r g1 g2 hR hin) hc16) = AccMath.accVec (rowF fl tab (wL L).val (2 * t1.val + 1) (2 * k.val)) (offF fl (wL L).val (2 * t1.val + 1) (2 * k.val)) 1 38 :=
        acc_step d L fl tab (wL L).val (2 * t1.val + 1) (2 * k.val) 0 _ hRA ⟨37, by decide⟩ ⟨1, by decide⟩ _ rfl _ hw_v1847_2 _ (k1_off71_form ..) _ hc16
      have s_A1_38 : addf (AccMath.accVec (rowF fl tab (wL L).val (2 * t1.val + 1) (2 * k.val)) (offF fl (wL L).val (2 * t1.val + 1) (2 * k.val)) 1 38) (shapeCast S16 (pair1_next.sl.v1897_2 d L tab k r g1 g2 hR hin) hc16) = AccMath.accVec (rowF fl tab (wL L).val (2 * t1.val + 1) (2 * k.val)) (offF fl (wL L).val (2 * t1.val + 1) (2 * k.val)) 1 39 :=
        acc_step d L fl tab (wL L).val (2 * t1.val + 1) (2 * k.val) 0 _ hRA ⟨38, by decide⟩ ⟨1, by decide⟩ _ rfl _ hw_v1883_2 _ (k1_off72_form ..) _ hc16
      have s_A1_39 : addf (AccMath.accVec (rowF fl tab (wL L).val (2 * t1.val + 1) (2 * k.val)) (offF fl (wL L).val (2 * t1.val + 1) (2 * k.val)) 1 39) (shapeCast S16 (pair1_next.sl.v1933_2 d L tab k r g1 g2 hR hin) hc16) = AccMath.accVec (rowF fl tab (wL L).val (2 * t1.val + 1) (2 * k.val)) (offF fl (wL L).val (2 * t1.val + 1) (2 * k.val)) 1 40 :=
        acc_step d L fl tab (wL L).val (2 * t1.val + 1) (2 * k.val) 0 _ hRA ⟨39, by decide⟩ ⟨1, by decide⟩ _ rfl _ hw_v1919_2 _ (k1_off73_form ..) _ hc16
      have s_A1_40 : addf (AccMath.accVec (rowF fl tab (wL L).val (2 * t1.val + 1) (2 * k.val)) (offF fl (wL L).val (2 * t1.val + 1) (2 * k.val)) 1 40) (shapeCast S16 (pair1_next.sl.v1969_2 d L tab k r g1 g2 hR hin) hc16) = AccMath.accVec (rowF fl tab (wL L).val (2 * t1.val + 1) (2 * k.val)) (offF fl (wL L).val (2 * t1.val + 1) (2 * k.val)) 1 41 :=
        acc_step d L fl tab (wL L).val (2 * t1.val + 1) (2 * k.val) 0 _ hRA ⟨40, by decide⟩ ⟨1, by decide⟩ _ rfl _ hw_v1955_2 _ (k1_off74_form ..) _ hc16
      have s_A1_41 : addf (AccMath.accVec (rowF fl tab (wL L).val (2 * t1.val + 1) (2 * k.val)) (offF fl (wL L).val (2 * t1.val + 1) (2 * k.val)) 1 41) (shapeCast S16 (pair1_next.sl.v2005_2 d L tab k r g1 g2 hR hin) hc16) = AccMath.accVec (rowF fl tab (wL L).val (2 * t1.val + 1) (2 * k.val)) (offF fl (wL L).val (2 * t1.val + 1) (2 * k.val)) 1 42 :=
        acc_step d L fl tab (wL L).val (2 * t1.val + 1) (2 * k.val) 0 _ hRA ⟨41, by decide⟩ ⟨1, by decide⟩ _ rfl _ hw_v1991_2 _ (k1_off75_form ..) _ hc16
      have s_A1_42 : addf (AccMath.accVec (rowF fl tab (wL L).val (2 * t1.val + 1) (2 * k.val)) (offF fl (wL L).val (2 * t1.val + 1) (2 * k.val)) 1 42) (shapeCast S16 (pair1_next.sl.v2041_2 d L tab k r g1 g2 hR hin) hc16) = AccMath.accVec (rowF fl tab (wL L).val (2 * t1.val + 1) (2 * k.val)) (offF fl (wL L).val (2 * t1.val + 1) (2 * k.val)) 1 43 :=
        acc_step d L fl tab (wL L).val (2 * t1.val + 1) (2 * k.val) 0 _ hRA ⟨42, by decide⟩ ⟨1, by decide⟩ _ rfl _ hw_v2027_2 _ (k1_off76_form ..) _ hc16
      have s_A1_43 : addf (AccMath.accVec (rowF fl tab (wL L).val (2 * t1.val + 1) (2 * k.val)) (offF fl (wL L).val (2 * t1.val + 1) (2 * k.val)) 1 43) (shapeCast S16 (pair1_next.sl.v2077_2 d L tab k r g1 g2 hR hin) hc16) = AccMath.accVec (rowF fl tab (wL L).val (2 * t1.val + 1) (2 * k.val)) (offF fl (wL L).val (2 * t1.val + 1) (2 * k.val)) 1 44 :=
        acc_step d L fl tab (wL L).val (2 * t1.val + 1) (2 * k.val) 0 _ hRA ⟨43, by decide⟩ ⟨1, by decide⟩ _ rfl _ hw_v2063_2 _ (k1_off77_form ..) _ hc16
      have s_A1_44 : addf (AccMath.accVec (rowF fl tab (wL L).val (2 * t1.val + 1) (2 * k.val)) (offF fl (wL L).val (2 * t1.val + 1) (2 * k.val)) 1 44) (shapeCast S16 (pair1_next.sl.v2113_2 d L tab k r g1 g2 hR hin) hc16) = AccMath.accVec (rowF fl tab (wL L).val (2 * t1.val + 1) (2 * k.val)) (offF fl (wL L).val (2 * t1.val + 1) (2 * k.val)) 1 45 :=
        acc_step d L fl tab (wL L).val (2 * t1.val + 1) (2 * k.val) 0 _ hRA ⟨44, by decide⟩ ⟨1, by decide⟩ _ rfl _ hw_v2099_2 _ (k1_off78_form ..) _ hc16
      have s_A1_45 : addf (AccMath.accVec (rowF fl tab (wL L).val (2 * t1.val + 1) (2 * k.val)) (offF fl (wL L).val (2 * t1.val + 1) (2 * k.val)) 1 45) (shapeCast S16 (pair1_next.sl.v2149_2 d L tab k r g1 g2 hR hin) hc16) = AccMath.accVec (rowF fl tab (wL L).val (2 * t1.val + 1) (2 * k.val)) (offF fl (wL L).val (2 * t1.val + 1) (2 * k.val)) 1 46 :=
        acc_step d L fl tab (wL L).val (2 * t1.val + 1) (2 * k.val) 0 _ hRA ⟨45, by decide⟩ ⟨1, by decide⟩ _ rfl _ hw_v2135_2 _ (k1_off79_form ..) _ hc16
      have s_A1_46 : addf (AccMath.accVec (rowF fl tab (wL L).val (2 * t1.val + 1) (2 * k.val)) (offF fl (wL L).val (2 * t1.val + 1) (2 * k.val)) 1 46) (shapeCast S16 (pair1_next.sl.v2185_2 d L tab k r g1 g2 hR hin) hc16) = AccMath.accVec (rowF fl tab (wL L).val (2 * t1.val + 1) (2 * k.val)) (offF fl (wL L).val (2 * t1.val + 1) (2 * k.val)) 1 47 :=
        acc_step d L fl tab (wL L).val (2 * t1.val + 1) (2 * k.val) 0 _ hRA ⟨46, by decide⟩ ⟨1, by decide⟩ _ rfl _ hw_v2171_2 _ (k1_off80_form ..) _ hc16
      have s_A1_47 : addf (AccMath.accVec (rowF fl tab (wL L).val (2 * t1.val + 1) (2 * k.val)) (offF fl (wL L).val (2 * t1.val + 1) (2 * k.val)) 1 47) (shapeCast S16 (pair1_next.sl.v2221_2 d L tab k r g1 g2 hR hin) hc16) = AccMath.accVec (rowF fl tab (wL L).val (2 * t1.val + 1) (2 * k.val)) (offF fl (wL L).val (2 * t1.val + 1) (2 * k.val)) 1 48 :=
        acc_step d L fl tab (wL L).val (2 * t1.val + 1) (2 * k.val) 0 _ hRA ⟨47, by decide⟩ ⟨1, by decide⟩ _ rfl _ hw_v2207_2 _ (k1_off81_form ..) _ hc16
      have s_A1_48 : addf (AccMath.accVec (rowF fl tab (wL L).val (2 * t1.val + 1) (2 * k.val)) (offF fl (wL L).val (2 * t1.val + 1) (2 * k.val)) 1 48) (shapeCast S16 (pair1_next.sl.v1470 d L tab k r g1 g2 hR hin) hc16) = AccMath.accVec (rowF fl tab (wL L).val (2 * t1.val + 1) (2 * k.val)) (offF fl (wL L).val (2 * t1.val + 1) (2 * k.val)) 1 49 :=
        acc_step d L fl tab (wL L).val (2 * t1.val + 1) (2 * k.val) 0 _ hRA ⟨48, by decide⟩ ⟨1, by decide⟩ _ rfl _ hw_v1456 _ (k1_off83_form ..) _ hc16
      have s_A1_49 : addf (AccMath.accVec (rowF fl tab (wL L).val (2 * t1.val + 1) (2 * k.val)) (offF fl (wL L).val (2 * t1.val + 1) (2 * k.val)) 1 49) (shapeCast S16 (pair1_next.sl.v1504 d L tab k r g1 g2 hR hin) hc16) = AccMath.accVec (rowF fl tab (wL L).val (2 * t1.val + 1) (2 * k.val)) (offF fl (wL L).val (2 * t1.val + 1) (2 * k.val)) 1 50 :=
        acc_step d L fl tab (wL L).val (2 * t1.val + 1) (2 * k.val) 0 _ hRA ⟨49, by decide⟩ ⟨1, by decide⟩ _ rfl _ hw_v1490 _ (k1_off84_form ..) _ hc16
      have hP_A1 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val)) (offF fl (wL L).val (2 * t1.val + 1) (2 * k.val)) 1 0) (shapeCast S16 (pair1_next.sl.v1681 d L tab k r g1 g2 hR hin) hc16)) (shapeCast S16 (pair1_next.sl.v1717 d L tab k r g1 g2 hR hin) hc16)) (shapeCast S16 (pair1_next.sl.v1753 d L tab k r g1 g2 hR hin) hc16)) (shapeCast S16 (pair1_next.sl.v1789 d L tab k r g1 g2 hR hin) hc16)) (shapeCast S16 (pair1_next.sl.v1825 d L tab k r g1 g2 hR hin) hc16)) (shapeCast S16 (pair1_next.sl.v1861 d L tab k r g1 g2 hR hin) hc16)) (shapeCast S16 (pair1_next.sl.v1897 d L tab k r g1 g2 hR hin) hc16)) (shapeCast S16 (pair1_next.sl.v1933 d L tab k r g1 g2 hR hin) hc16)) (shapeCast S16 (pair1_next.sl.v1969 d L tab k r g1 g2 hR hin) hc16)) (shapeCast S16 (pair1_next.sl.v2005 d L tab k r g1 g2 hR hin) hc16)) (shapeCast S16 (pair1_next.sl.v2041 d L tab k r g1 g2 hR hin) hc16)) (shapeCast S16 (pair1_next.sl.v2077 d L tab k r g1 g2 hR hin) hc16)) (shapeCast S16 (pair1_next.sl.v2113 d L tab k r g1 g2 hR hin) hc16)) (shapeCast S16 (pair1_next.sl.v2149 d L tab k r g1 g2 hR hin) hc16)) (shapeCast S16 (pair1_next.sl.v2185 d L tab k r g1 g2 hR hin) hc16)) (shapeCast S16 (pair1_next.sl.v2221 d L tab k r g1 g2 hR hin) hc16)) (shapeCast S16 (pair1_next.sl.v1681_1 d L tab k r g1 g2 hR hin) hc16)) (shapeCast S16 (pair1_next.sl.v1717_1 d L tab k r g1 g2 hR hin) hc16)) (shapeCast S16 (pair1_next.sl.v1753_1 d L tab k r g1 g2 hR hin) hc16)) (shapeCast S16 (pair1_next.sl.v1789_1 d L tab k r g1 g2 hR hin) hc16)) (shapeCast S16 (pair1_next.sl.v1825_1 d L tab k r g1 g2 hR hin) hc16)) (shapeCast S16 (pair1_next.sl.v1861_1 d L tab k r g1 g2 hR hin) hc16)) (shapeCast S16 (pair1_next.sl.v1897_1 d L tab k r g1 g2 hR hin) hc16)) (shapeCast S16 (pair1_next.sl.v1933_1 d L tab k r g1 g2 hR hin) hc16)) (shapeCast S16 (pair1_next.sl.v1969_1 d L tab k r g1 g2 hR hin) hc16)) (shapeCast S16 (pair1_next.sl.v2005_1 d L tab k r g1 g2 hR hin) hc16)) (shapeCast S16 (pair1_next.sl.v2041_1 d L tab k r g1 g2 hR hin) hc16)) (shapeCast S16 (pair1_next.sl.v2077_1 d L tab k r g1 g2 hR hin) hc16)) (shapeCast S16 (pair1_next.sl.v2113_1 d L tab k r g1 g2 hR hin) hc16)) (shapeCast S16 (pair1_next.sl.v2149_1 d L tab k r g1 g2 hR hin) hc16)) (shapeCast S16 (pair1_next.sl.v2185_1 d L tab k r g1 g2 hR hin) hc16)) (shapeCast S16 (pair1_next.sl.v2221_1 d L tab k r g1 g2 hR hin) hc16)) (shapeCast S16 (pair1_next.sl.v1681_2 d L tab k r g1 g2 hR hin) hc16)) (shapeCast S16 (pair1_next.sl.v1717_2 d L tab k r g1 g2 hR hin) hc16)) (shapeCast S16 (pair1_next.sl.v1753_2 d L tab k r g1 g2 hR hin) hc16)) (shapeCast S16 (pair1_next.sl.v1789_2 d L tab k r g1 g2 hR hin) hc16)) (shapeCast S16 (pair1_next.sl.v1825_2 d L tab k r g1 g2 hR hin) hc16)) (shapeCast S16 (pair1_next.sl.v1861_2 d L tab k r g1 g2 hR hin) hc16)) (shapeCast S16 (pair1_next.sl.v1897_2 d L tab k r g1 g2 hR hin) hc16)) (shapeCast S16 (pair1_next.sl.v1933_2 d L tab k r g1 g2 hR hin) hc16)) (shapeCast S16 (pair1_next.sl.v1969_2 d L tab k r g1 g2 hR hin) hc16)) (shapeCast S16 (pair1_next.sl.v2005_2 d L tab k r g1 g2 hR hin) hc16)) (shapeCast S16 (pair1_next.sl.v2041_2 d L tab k r g1 g2 hR hin) hc16)) (shapeCast S16 (pair1_next.sl.v2077_2 d L tab k r g1 g2 hR hin) hc16)) (shapeCast S16 (pair1_next.sl.v2113_2 d L tab k r g1 g2 hR hin) hc16)) (shapeCast S16 (pair1_next.sl.v2149_2 d L tab k r g1 g2 hR hin) hc16)) (shapeCast S16 (pair1_next.sl.v2185_2 d L tab k r g1 g2 hR hin) hc16)) (shapeCast S16 (pair1_next.sl.v2221_2 d L tab k r g1 g2 hR hin) hc16)) (shapeCast S16 (pair1_next.sl.v1470 d L tab k r g1 g2 hR hin) hc16)) (shapeCast S16 (pair1_next.sl.v1504 d L tab k r g1 g2 hR hin) hc16)) hc1 x = Spec.bagPartial fl tab (128 * (wL L).val + 16 * (2 * t1.val + 1) + (2 * k.val)) (16 * 1 + (x 2).val) 50 := fun x => by
        rw [s_A1_0, s_A1_1, s_A1_2, s_A1_3, s_A1_4, s_A1_5, s_A1_6, s_A1_7, s_A1_8, s_A1_9, s_A1_10, s_A1_11, s_A1_12, s_A1_13, s_A1_14, s_A1_15, s_A1_16, s_A1_17, s_A1_18, s_A1_19, s_A1_20, s_A1_21, s_A1_22, s_A1_23, s_A1_24, s_A1_25, s_A1_26, s_A1_27, s_A1_28, s_A1_29, s_A1_30, s_A1_31, s_A1_32, s_A1_33, s_A1_34, s_A1_35, s_A1_36, s_A1_37, s_A1_38, s_A1_39, s_A1_40, s_A1_41, s_A1_42, s_A1_43, s_A1_44, s_A1_45, s_A1_46, s_A1_47, s_A1_48, s_A1_49]
        exact payload_ok fl tab (wL L).val (2 * t1.val + 1) (2 * k.val) ⟨1, by decide⟩ hc1 x
      have s_A2_0 : addf (AccMath.accVec (rowF fl tab (wL L).val (2 * t1.val + 1) (2 * k.val)) (offF fl (wL L).val (2 * t1.val + 1) (2 * k.val)) 2 0) (shapeCast S16 (pair1_next.sl.v1689 d L tab k r g1 g2 hR hin) hc16) = AccMath.accVec (rowF fl tab (wL L).val (2 * t1.val + 1) (2 * k.val)) (offF fl (wL L).val (2 * t1.val + 1) (2 * k.val)) 2 1 :=
        acc_step d L fl tab (wL L).val (2 * t1.val + 1) (2 * k.val) 0 _ hRA ⟨0, by decide⟩ ⟨2, by decide⟩ _ rfl _ hw_v1667 _ (k1_off66_form ..) _ hc16
      have s_A2_1 : addf (AccMath.accVec (rowF fl tab (wL L).val (2 * t1.val + 1) (2 * k.val)) (offF fl (wL L).val (2 * t1.val + 1) (2 * k.val)) 2 1) (shapeCast S16 (pair1_next.sl.v1725 d L tab k r g1 g2 hR hin) hc16) = AccMath.accVec (rowF fl tab (wL L).val (2 * t1.val + 1) (2 * k.val)) (offF fl (wL L).val (2 * t1.val + 1) (2 * k.val)) 2 2 :=
        acc_step d L fl tab (wL L).val (2 * t1.val + 1) (2 * k.val) 0 _ hRA ⟨1, by decide⟩ ⟨2, by decide⟩ _ rfl _ hw_v1703 _ (k1_off67_form ..) _ hc16
      have s_A2_2 : addf (AccMath.accVec (rowF fl tab (wL L).val (2 * t1.val + 1) (2 * k.val)) (offF fl (wL L).val (2 * t1.val + 1) (2 * k.val)) 2 2) (shapeCast S16 (pair1_next.sl.v1761 d L tab k r g1 g2 hR hin) hc16) = AccMath.accVec (rowF fl tab (wL L).val (2 * t1.val + 1) (2 * k.val)) (offF fl (wL L).val (2 * t1.val + 1) (2 * k.val)) 2 3 :=
        acc_step d L fl tab (wL L).val (2 * t1.val + 1) (2 * k.val) 0 _ hRA ⟨2, by decide⟩ ⟨2, by decide⟩ _ rfl _ hw_v1739 _ (k1_off68_form ..) _ hc16
      have s_A2_3 : addf (AccMath.accVec (rowF fl tab (wL L).val (2 * t1.val + 1) (2 * k.val)) (offF fl (wL L).val (2 * t1.val + 1) (2 * k.val)) 2 3) (shapeCast S16 (pair1_next.sl.v1797 d L tab k r g1 g2 hR hin) hc16) = AccMath.accVec (rowF fl tab (wL L).val (2 * t1.val + 1) (2 * k.val)) (offF fl (wL L).val (2 * t1.val + 1) (2 * k.val)) 2 4 :=
        acc_step d L fl tab (wL L).val (2 * t1.val + 1) (2 * k.val) 0 _ hRA ⟨3, by decide⟩ ⟨2, by decide⟩ _ rfl _ hw_v1775 _ (k1_off69_form ..) _ hc16
      have s_A2_4 : addf (AccMath.accVec (rowF fl tab (wL L).val (2 * t1.val + 1) (2 * k.val)) (offF fl (wL L).val (2 * t1.val + 1) (2 * k.val)) 2 4) (shapeCast S16 (pair1_next.sl.v1833 d L tab k r g1 g2 hR hin) hc16) = AccMath.accVec (rowF fl tab (wL L).val (2 * t1.val + 1) (2 * k.val)) (offF fl (wL L).val (2 * t1.val + 1) (2 * k.val)) 2 5 :=
        acc_step d L fl tab (wL L).val (2 * t1.val + 1) (2 * k.val) 0 _ hRA ⟨4, by decide⟩ ⟨2, by decide⟩ _ rfl _ hw_v1811 _ (k1_off70_form ..) _ hc16
      have s_A2_5 : addf (AccMath.accVec (rowF fl tab (wL L).val (2 * t1.val + 1) (2 * k.val)) (offF fl (wL L).val (2 * t1.val + 1) (2 * k.val)) 2 5) (shapeCast S16 (pair1_next.sl.v1869 d L tab k r g1 g2 hR hin) hc16) = AccMath.accVec (rowF fl tab (wL L).val (2 * t1.val + 1) (2 * k.val)) (offF fl (wL L).val (2 * t1.val + 1) (2 * k.val)) 2 6 :=
        acc_step d L fl tab (wL L).val (2 * t1.val + 1) (2 * k.val) 0 _ hRA ⟨5, by decide⟩ ⟨2, by decide⟩ _ rfl _ hw_v1847 _ (k1_off71_form ..) _ hc16
      have s_A2_6 : addf (AccMath.accVec (rowF fl tab (wL L).val (2 * t1.val + 1) (2 * k.val)) (offF fl (wL L).val (2 * t1.val + 1) (2 * k.val)) 2 6) (shapeCast S16 (pair1_next.sl.v1905 d L tab k r g1 g2 hR hin) hc16) = AccMath.accVec (rowF fl tab (wL L).val (2 * t1.val + 1) (2 * k.val)) (offF fl (wL L).val (2 * t1.val + 1) (2 * k.val)) 2 7 :=
        acc_step d L fl tab (wL L).val (2 * t1.val + 1) (2 * k.val) 0 _ hRA ⟨6, by decide⟩ ⟨2, by decide⟩ _ rfl _ hw_v1883 _ (k1_off72_form ..) _ hc16
      have s_A2_7 : addf (AccMath.accVec (rowF fl tab (wL L).val (2 * t1.val + 1) (2 * k.val)) (offF fl (wL L).val (2 * t1.val + 1) (2 * k.val)) 2 7) (shapeCast S16 (pair1_next.sl.v1941 d L tab k r g1 g2 hR hin) hc16) = AccMath.accVec (rowF fl tab (wL L).val (2 * t1.val + 1) (2 * k.val)) (offF fl (wL L).val (2 * t1.val + 1) (2 * k.val)) 2 8 :=
        acc_step d L fl tab (wL L).val (2 * t1.val + 1) (2 * k.val) 0 _ hRA ⟨7, by decide⟩ ⟨2, by decide⟩ _ rfl _ hw_v1919 _ (k1_off73_form ..) _ hc16
      have s_A2_8 : addf (AccMath.accVec (rowF fl tab (wL L).val (2 * t1.val + 1) (2 * k.val)) (offF fl (wL L).val (2 * t1.val + 1) (2 * k.val)) 2 8) (shapeCast S16 (pair1_next.sl.v1977 d L tab k r g1 g2 hR hin) hc16) = AccMath.accVec (rowF fl tab (wL L).val (2 * t1.val + 1) (2 * k.val)) (offF fl (wL L).val (2 * t1.val + 1) (2 * k.val)) 2 9 :=
        acc_step d L fl tab (wL L).val (2 * t1.val + 1) (2 * k.val) 0 _ hRA ⟨8, by decide⟩ ⟨2, by decide⟩ _ rfl _ hw_v1955 _ (k1_off74_form ..) _ hc16
      have s_A2_9 : addf (AccMath.accVec (rowF fl tab (wL L).val (2 * t1.val + 1) (2 * k.val)) (offF fl (wL L).val (2 * t1.val + 1) (2 * k.val)) 2 9) (shapeCast S16 (pair1_next.sl.v2013 d L tab k r g1 g2 hR hin) hc16) = AccMath.accVec (rowF fl tab (wL L).val (2 * t1.val + 1) (2 * k.val)) (offF fl (wL L).val (2 * t1.val + 1) (2 * k.val)) 2 10 :=
        acc_step d L fl tab (wL L).val (2 * t1.val + 1) (2 * k.val) 0 _ hRA ⟨9, by decide⟩ ⟨2, by decide⟩ _ rfl _ hw_v1991 _ (k1_off75_form ..) _ hc16
      have s_A2_10 : addf (AccMath.accVec (rowF fl tab (wL L).val (2 * t1.val + 1) (2 * k.val)) (offF fl (wL L).val (2 * t1.val + 1) (2 * k.val)) 2 10) (shapeCast S16 (pair1_next.sl.v2049 d L tab k r g1 g2 hR hin) hc16) = AccMath.accVec (rowF fl tab (wL L).val (2 * t1.val + 1) (2 * k.val)) (offF fl (wL L).val (2 * t1.val + 1) (2 * k.val)) 2 11 :=
        acc_step d L fl tab (wL L).val (2 * t1.val + 1) (2 * k.val) 0 _ hRA ⟨10, by decide⟩ ⟨2, by decide⟩ _ rfl _ hw_v2027 _ (k1_off76_form ..) _ hc16
      have s_A2_11 : addf (AccMath.accVec (rowF fl tab (wL L).val (2 * t1.val + 1) (2 * k.val)) (offF fl (wL L).val (2 * t1.val + 1) (2 * k.val)) 2 11) (shapeCast S16 (pair1_next.sl.v2085 d L tab k r g1 g2 hR hin) hc16) = AccMath.accVec (rowF fl tab (wL L).val (2 * t1.val + 1) (2 * k.val)) (offF fl (wL L).val (2 * t1.val + 1) (2 * k.val)) 2 12 :=
        acc_step d L fl tab (wL L).val (2 * t1.val + 1) (2 * k.val) 0 _ hRA ⟨11, by decide⟩ ⟨2, by decide⟩ _ rfl _ hw_v2063 _ (k1_off77_form ..) _ hc16
      have s_A2_12 : addf (AccMath.accVec (rowF fl tab (wL L).val (2 * t1.val + 1) (2 * k.val)) (offF fl (wL L).val (2 * t1.val + 1) (2 * k.val)) 2 12) (shapeCast S16 (pair1_next.sl.v2121 d L tab k r g1 g2 hR hin) hc16) = AccMath.accVec (rowF fl tab (wL L).val (2 * t1.val + 1) (2 * k.val)) (offF fl (wL L).val (2 * t1.val + 1) (2 * k.val)) 2 13 :=
        acc_step d L fl tab (wL L).val (2 * t1.val + 1) (2 * k.val) 0 _ hRA ⟨12, by decide⟩ ⟨2, by decide⟩ _ rfl _ hw_v2099 _ (k1_off78_form ..) _ hc16
      have s_A2_13 : addf (AccMath.accVec (rowF fl tab (wL L).val (2 * t1.val + 1) (2 * k.val)) (offF fl (wL L).val (2 * t1.val + 1) (2 * k.val)) 2 13) (shapeCast S16 (pair1_next.sl.v2157 d L tab k r g1 g2 hR hin) hc16) = AccMath.accVec (rowF fl tab (wL L).val (2 * t1.val + 1) (2 * k.val)) (offF fl (wL L).val (2 * t1.val + 1) (2 * k.val)) 2 14 :=
        acc_step d L fl tab (wL L).val (2 * t1.val + 1) (2 * k.val) 0 _ hRA ⟨13, by decide⟩ ⟨2, by decide⟩ _ rfl _ hw_v2135 _ (k1_off79_form ..) _ hc16
      have s_A2_14 : addf (AccMath.accVec (rowF fl tab (wL L).val (2 * t1.val + 1) (2 * k.val)) (offF fl (wL L).val (2 * t1.val + 1) (2 * k.val)) 2 14) (shapeCast S16 (pair1_next.sl.v2193 d L tab k r g1 g2 hR hin) hc16) = AccMath.accVec (rowF fl tab (wL L).val (2 * t1.val + 1) (2 * k.val)) (offF fl (wL L).val (2 * t1.val + 1) (2 * k.val)) 2 15 :=
        acc_step d L fl tab (wL L).val (2 * t1.val + 1) (2 * k.val) 0 _ hRA ⟨14, by decide⟩ ⟨2, by decide⟩ _ rfl _ hw_v2171 _ (k1_off80_form ..) _ hc16
      have s_A2_15 : addf (AccMath.accVec (rowF fl tab (wL L).val (2 * t1.val + 1) (2 * k.val)) (offF fl (wL L).val (2 * t1.val + 1) (2 * k.val)) 2 15) (shapeCast S16 (pair1_next.sl.v2229 d L tab k r g1 g2 hR hin) hc16) = AccMath.accVec (rowF fl tab (wL L).val (2 * t1.val + 1) (2 * k.val)) (offF fl (wL L).val (2 * t1.val + 1) (2 * k.val)) 2 16 :=
        acc_step d L fl tab (wL L).val (2 * t1.val + 1) (2 * k.val) 0 _ hRA ⟨15, by decide⟩ ⟨2, by decide⟩ _ rfl _ hw_v2207 _ (k1_off81_form ..) _ hc16
      have s_A2_16 : addf (AccMath.accVec (rowF fl tab (wL L).val (2 * t1.val + 1) (2 * k.val)) (offF fl (wL L).val (2 * t1.val + 1) (2 * k.val)) 2 16) (shapeCast S16 (pair1_next.sl.v1689_1 d L tab k r g1 g2 hR hin) hc16) = AccMath.accVec (rowF fl tab (wL L).val (2 * t1.val + 1) (2 * k.val)) (offF fl (wL L).val (2 * t1.val + 1) (2 * k.val)) 2 17 :=
        acc_step d L fl tab (wL L).val (2 * t1.val + 1) (2 * k.val) 0 _ hRA ⟨16, by decide⟩ ⟨2, by decide⟩ _ rfl _ hw_v1667_1 _ (k1_off66_form ..) _ hc16
      have s_A2_17 : addf (AccMath.accVec (rowF fl tab (wL L).val (2 * t1.val + 1) (2 * k.val)) (offF fl (wL L).val (2 * t1.val + 1) (2 * k.val)) 2 17) (shapeCast S16 (pair1_next.sl.v1725_1 d L tab k r g1 g2 hR hin) hc16) = AccMath.accVec (rowF fl tab (wL L).val (2 * t1.val + 1) (2 * k.val)) (offF fl (wL L).val (2 * t1.val + 1) (2 * k.val)) 2 18 :=
        acc_step d L fl tab (wL L).val (2 * t1.val + 1) (2 * k.val) 0 _ hRA ⟨17, by decide⟩ ⟨2, by decide⟩ _ rfl _ hw_v1703_1 _ (k1_off67_form ..) _ hc16
      have s_A2_18 : addf (AccMath.accVec (rowF fl tab (wL L).val (2 * t1.val + 1) (2 * k.val)) (offF fl (wL L).val (2 * t1.val + 1) (2 * k.val)) 2 18) (shapeCast S16 (pair1_next.sl.v1761_1 d L tab k r g1 g2 hR hin) hc16) = AccMath.accVec (rowF fl tab (wL L).val (2 * t1.val + 1) (2 * k.val)) (offF fl (wL L).val (2 * t1.val + 1) (2 * k.val)) 2 19 :=
        acc_step d L fl tab (wL L).val (2 * t1.val + 1) (2 * k.val) 0 _ hRA ⟨18, by decide⟩ ⟨2, by decide⟩ _ rfl _ hw_v1739_1 _ (k1_off68_form ..) _ hc16
      have s_A2_19 : addf (AccMath.accVec (rowF fl tab (wL L).val (2 * t1.val + 1) (2 * k.val)) (offF fl (wL L).val (2 * t1.val + 1) (2 * k.val)) 2 19) (shapeCast S16 (pair1_next.sl.v1797_1 d L tab k r g1 g2 hR hin) hc16) = AccMath.accVec (rowF fl tab (wL L).val (2 * t1.val + 1) (2 * k.val)) (offF fl (wL L).val (2 * t1.val + 1) (2 * k.val)) 2 20 :=
        acc_step d L fl tab (wL L).val (2 * t1.val + 1) (2 * k.val) 0 _ hRA ⟨19, by decide⟩ ⟨2, by decide⟩ _ rfl _ hw_v1775_1 _ (k1_off69_form ..) _ hc16
      have s_A2_20 : addf (AccMath.accVec (rowF fl tab (wL L).val (2 * t1.val + 1) (2 * k.val)) (offF fl (wL L).val (2 * t1.val + 1) (2 * k.val)) 2 20) (shapeCast S16 (pair1_next.sl.v1833_1 d L tab k r g1 g2 hR hin) hc16) = AccMath.accVec (rowF fl tab (wL L).val (2 * t1.val + 1) (2 * k.val)) (offF fl (wL L).val (2 * t1.val + 1) (2 * k.val)) 2 21 :=
        acc_step d L fl tab (wL L).val (2 * t1.val + 1) (2 * k.val) 0 _ hRA ⟨20, by decide⟩ ⟨2, by decide⟩ _ rfl _ hw_v1811_1 _ (k1_off70_form ..) _ hc16
      have s_A2_21 : addf (AccMath.accVec (rowF fl tab (wL L).val (2 * t1.val + 1) (2 * k.val)) (offF fl (wL L).val (2 * t1.val + 1) (2 * k.val)) 2 21) (shapeCast S16 (pair1_next.sl.v1869_1 d L tab k r g1 g2 hR hin) hc16) = AccMath.accVec (rowF fl tab (wL L).val (2 * t1.val + 1) (2 * k.val)) (offF fl (wL L).val (2 * t1.val + 1) (2 * k.val)) 2 22 :=
        acc_step d L fl tab (wL L).val (2 * t1.val + 1) (2 * k.val) 0 _ hRA ⟨21, by decide⟩ ⟨2, by decide⟩ _ rfl _ hw_v1847_1 _ (k1_off71_form ..) _ hc16
      have s_A2_22 : addf (AccMath.accVec (rowF fl tab (wL L).val (2 * t1.val + 1) (2 * k.val)) (offF fl (wL L).val (2 * t1.val + 1) (2 * k.val)) 2 22) (shapeCast S16 (pair1_next.sl.v1905_1 d L tab k r g1 g2 hR hin) hc16) = AccMath.accVec (rowF fl tab (wL L).val (2 * t1.val + 1) (2 * k.val)) (offF fl (wL L).val (2 * t1.val + 1) (2 * k.val)) 2 23 :=
        acc_step d L fl tab (wL L).val (2 * t1.val + 1) (2 * k.val) 0 _ hRA ⟨22, by decide⟩ ⟨2, by decide⟩ _ rfl _ hw_v1883_1 _ (k1_off72_form ..) _ hc16
      have s_A2_23 : addf (AccMath.accVec (rowF fl tab (wL L).val (2 * t1.val + 1) (2 * k.val)) (offF fl (wL L).val (2 * t1.val + 1) (2 * k.val)) 2 23) (shapeCast S16 (pair1_next.sl.v1941_1 d L tab k r g1 g2 hR hin) hc16) = AccMath.accVec (rowF fl tab (wL L).val (2 * t1.val + 1) (2 * k.val)) (offF fl (wL L).val (2 * t1.val + 1) (2 * k.val)) 2 24 :=
        acc_step d L fl tab (wL L).val (2 * t1.val + 1) (2 * k.val) 0 _ hRA ⟨23, by decide⟩ ⟨2, by decide⟩ _ rfl _ hw_v1919_1 _ (k1_off73_form ..) _ hc16
      have s_A2_24 : addf (AccMath.accVec (rowF fl tab (wL L).val (2 * t1.val + 1) (2 * k.val)) (offF fl (wL L).val (2 * t1.val + 1) (2 * k.val)) 2 24) (shapeCast S16 (pair1_next.sl.v1977_1 d L tab k r g1 g2 hR hin) hc16) = AccMath.accVec (rowF fl tab (wL L).val (2 * t1.val + 1) (2 * k.val)) (offF fl (wL L).val (2 * t1.val + 1) (2 * k.val)) 2 25 :=
        acc_step d L fl tab (wL L).val (2 * t1.val + 1) (2 * k.val) 0 _ hRA ⟨24, by decide⟩ ⟨2, by decide⟩ _ rfl _ hw_v1955_1 _ (k1_off74_form ..) _ hc16
      have s_A2_25 : addf (AccMath.accVec (rowF fl tab (wL L).val (2 * t1.val + 1) (2 * k.val)) (offF fl (wL L).val (2 * t1.val + 1) (2 * k.val)) 2 25) (shapeCast S16 (pair1_next.sl.v2013_1 d L tab k r g1 g2 hR hin) hc16) = AccMath.accVec (rowF fl tab (wL L).val (2 * t1.val + 1) (2 * k.val)) (offF fl (wL L).val (2 * t1.val + 1) (2 * k.val)) 2 26 :=
        acc_step d L fl tab (wL L).val (2 * t1.val + 1) (2 * k.val) 0 _ hRA ⟨25, by decide⟩ ⟨2, by decide⟩ _ rfl _ hw_v1991_1 _ (k1_off75_form ..) _ hc16
      have s_A2_26 : addf (AccMath.accVec (rowF fl tab (wL L).val (2 * t1.val + 1) (2 * k.val)) (offF fl (wL L).val (2 * t1.val + 1) (2 * k.val)) 2 26) (shapeCast S16 (pair1_next.sl.v2049_1 d L tab k r g1 g2 hR hin) hc16) = AccMath.accVec (rowF fl tab (wL L).val (2 * t1.val + 1) (2 * k.val)) (offF fl (wL L).val (2 * t1.val + 1) (2 * k.val)) 2 27 :=
        acc_step d L fl tab (wL L).val (2 * t1.val + 1) (2 * k.val) 0 _ hRA ⟨26, by decide⟩ ⟨2, by decide⟩ _ rfl _ hw_v2027_1 _ (k1_off76_form ..) _ hc16
      have s_A2_27 : addf (AccMath.accVec (rowF fl tab (wL L).val (2 * t1.val + 1) (2 * k.val)) (offF fl (wL L).val (2 * t1.val + 1) (2 * k.val)) 2 27) (shapeCast S16 (pair1_next.sl.v2085_1 d L tab k r g1 g2 hR hin) hc16) = AccMath.accVec (rowF fl tab (wL L).val (2 * t1.val + 1) (2 * k.val)) (offF fl (wL L).val (2 * t1.val + 1) (2 * k.val)) 2 28 :=
        acc_step d L fl tab (wL L).val (2 * t1.val + 1) (2 * k.val) 0 _ hRA ⟨27, by decide⟩ ⟨2, by decide⟩ _ rfl _ hw_v2063_1 _ (k1_off77_form ..) _ hc16
      have s_A2_28 : addf (AccMath.accVec (rowF fl tab (wL L).val (2 * t1.val + 1) (2 * k.val)) (offF fl (wL L).val (2 * t1.val + 1) (2 * k.val)) 2 28) (shapeCast S16 (pair1_next.sl.v2121_1 d L tab k r g1 g2 hR hin) hc16) = AccMath.accVec (rowF fl tab (wL L).val (2 * t1.val + 1) (2 * k.val)) (offF fl (wL L).val (2 * t1.val + 1) (2 * k.val)) 2 29 :=
        acc_step d L fl tab (wL L).val (2 * t1.val + 1) (2 * k.val) 0 _ hRA ⟨28, by decide⟩ ⟨2, by decide⟩ _ rfl _ hw_v2099_1 _ (k1_off78_form ..) _ hc16
      have s_A2_29 : addf (AccMath.accVec (rowF fl tab (wL L).val (2 * t1.val + 1) (2 * k.val)) (offF fl (wL L).val (2 * t1.val + 1) (2 * k.val)) 2 29) (shapeCast S16 (pair1_next.sl.v2157_1 d L tab k r g1 g2 hR hin) hc16) = AccMath.accVec (rowF fl tab (wL L).val (2 * t1.val + 1) (2 * k.val)) (offF fl (wL L).val (2 * t1.val + 1) (2 * k.val)) 2 30 :=
        acc_step d L fl tab (wL L).val (2 * t1.val + 1) (2 * k.val) 0 _ hRA ⟨29, by decide⟩ ⟨2, by decide⟩ _ rfl _ hw_v2135_1 _ (k1_off79_form ..) _ hc16
      have s_A2_30 : addf (AccMath.accVec (rowF fl tab (wL L).val (2 * t1.val + 1) (2 * k.val)) (offF fl (wL L).val (2 * t1.val + 1) (2 * k.val)) 2 30) (shapeCast S16 (pair1_next.sl.v2193_1 d L tab k r g1 g2 hR hin) hc16) = AccMath.accVec (rowF fl tab (wL L).val (2 * t1.val + 1) (2 * k.val)) (offF fl (wL L).val (2 * t1.val + 1) (2 * k.val)) 2 31 :=
        acc_step d L fl tab (wL L).val (2 * t1.val + 1) (2 * k.val) 0 _ hRA ⟨30, by decide⟩ ⟨2, by decide⟩ _ rfl _ hw_v2171_1 _ (k1_off80_form ..) _ hc16
      have s_A2_31 : addf (AccMath.accVec (rowF fl tab (wL L).val (2 * t1.val + 1) (2 * k.val)) (offF fl (wL L).val (2 * t1.val + 1) (2 * k.val)) 2 31) (shapeCast S16 (pair1_next.sl.v2229_1 d L tab k r g1 g2 hR hin) hc16) = AccMath.accVec (rowF fl tab (wL L).val (2 * t1.val + 1) (2 * k.val)) (offF fl (wL L).val (2 * t1.val + 1) (2 * k.val)) 2 32 :=
        acc_step d L fl tab (wL L).val (2 * t1.val + 1) (2 * k.val) 0 _ hRA ⟨31, by decide⟩ ⟨2, by decide⟩ _ rfl _ hw_v2207_1 _ (k1_off81_form ..) _ hc16
      have s_A2_32 : addf (AccMath.accVec (rowF fl tab (wL L).val (2 * t1.val + 1) (2 * k.val)) (offF fl (wL L).val (2 * t1.val + 1) (2 * k.val)) 2 32) (shapeCast S16 (pair1_next.sl.v1689_2 d L tab k r g1 g2 hR hin) hc16) = AccMath.accVec (rowF fl tab (wL L).val (2 * t1.val + 1) (2 * k.val)) (offF fl (wL L).val (2 * t1.val + 1) (2 * k.val)) 2 33 :=
        acc_step d L fl tab (wL L).val (2 * t1.val + 1) (2 * k.val) 0 _ hRA ⟨32, by decide⟩ ⟨2, by decide⟩ _ rfl _ hw_v1667_2 _ (k1_off66_form ..) _ hc16
      have s_A2_33 : addf (AccMath.accVec (rowF fl tab (wL L).val (2 * t1.val + 1) (2 * k.val)) (offF fl (wL L).val (2 * t1.val + 1) (2 * k.val)) 2 33) (shapeCast S16 (pair1_next.sl.v1725_2 d L tab k r g1 g2 hR hin) hc16) = AccMath.accVec (rowF fl tab (wL L).val (2 * t1.val + 1) (2 * k.val)) (offF fl (wL L).val (2 * t1.val + 1) (2 * k.val)) 2 34 :=
        acc_step d L fl tab (wL L).val (2 * t1.val + 1) (2 * k.val) 0 _ hRA ⟨33, by decide⟩ ⟨2, by decide⟩ _ rfl _ hw_v1703_2 _ (k1_off67_form ..) _ hc16
      have s_A2_34 : addf (AccMath.accVec (rowF fl tab (wL L).val (2 * t1.val + 1) (2 * k.val)) (offF fl (wL L).val (2 * t1.val + 1) (2 * k.val)) 2 34) (shapeCast S16 (pair1_next.sl.v1761_2 d L tab k r g1 g2 hR hin) hc16) = AccMath.accVec (rowF fl tab (wL L).val (2 * t1.val + 1) (2 * k.val)) (offF fl (wL L).val (2 * t1.val + 1) (2 * k.val)) 2 35 :=
        acc_step d L fl tab (wL L).val (2 * t1.val + 1) (2 * k.val) 0 _ hRA ⟨34, by decide⟩ ⟨2, by decide⟩ _ rfl _ hw_v1739_2 _ (k1_off68_form ..) _ hc16
      have s_A2_35 : addf (AccMath.accVec (rowF fl tab (wL L).val (2 * t1.val + 1) (2 * k.val)) (offF fl (wL L).val (2 * t1.val + 1) (2 * k.val)) 2 35) (shapeCast S16 (pair1_next.sl.v1797_2 d L tab k r g1 g2 hR hin) hc16) = AccMath.accVec (rowF fl tab (wL L).val (2 * t1.val + 1) (2 * k.val)) (offF fl (wL L).val (2 * t1.val + 1) (2 * k.val)) 2 36 :=
        acc_step d L fl tab (wL L).val (2 * t1.val + 1) (2 * k.val) 0 _ hRA ⟨35, by decide⟩ ⟨2, by decide⟩ _ rfl _ hw_v1775_2 _ (k1_off69_form ..) _ hc16
      have s_A2_36 : addf (AccMath.accVec (rowF fl tab (wL L).val (2 * t1.val + 1) (2 * k.val)) (offF fl (wL L).val (2 * t1.val + 1) (2 * k.val)) 2 36) (shapeCast S16 (pair1_next.sl.v1833_2 d L tab k r g1 g2 hR hin) hc16) = AccMath.accVec (rowF fl tab (wL L).val (2 * t1.val + 1) (2 * k.val)) (offF fl (wL L).val (2 * t1.val + 1) (2 * k.val)) 2 37 :=
        acc_step d L fl tab (wL L).val (2 * t1.val + 1) (2 * k.val) 0 _ hRA ⟨36, by decide⟩ ⟨2, by decide⟩ _ rfl _ hw_v1811_2 _ (k1_off70_form ..) _ hc16
      have s_A2_37 : addf (AccMath.accVec (rowF fl tab (wL L).val (2 * t1.val + 1) (2 * k.val)) (offF fl (wL L).val (2 * t1.val + 1) (2 * k.val)) 2 37) (shapeCast S16 (pair1_next.sl.v1869_2 d L tab k r g1 g2 hR hin) hc16) = AccMath.accVec (rowF fl tab (wL L).val (2 * t1.val + 1) (2 * k.val)) (offF fl (wL L).val (2 * t1.val + 1) (2 * k.val)) 2 38 :=
        acc_step d L fl tab (wL L).val (2 * t1.val + 1) (2 * k.val) 0 _ hRA ⟨37, by decide⟩ ⟨2, by decide⟩ _ rfl _ hw_v1847_2 _ (k1_off71_form ..) _ hc16
      have s_A2_38 : addf (AccMath.accVec (rowF fl tab (wL L).val (2 * t1.val + 1) (2 * k.val)) (offF fl (wL L).val (2 * t1.val + 1) (2 * k.val)) 2 38) (shapeCast S16 (pair1_next.sl.v1905_2 d L tab k r g1 g2 hR hin) hc16) = AccMath.accVec (rowF fl tab (wL L).val (2 * t1.val + 1) (2 * k.val)) (offF fl (wL L).val (2 * t1.val + 1) (2 * k.val)) 2 39 :=
        acc_step d L fl tab (wL L).val (2 * t1.val + 1) (2 * k.val) 0 _ hRA ⟨38, by decide⟩ ⟨2, by decide⟩ _ rfl _ hw_v1883_2 _ (k1_off72_form ..) _ hc16
      have s_A2_39 : addf (AccMath.accVec (rowF fl tab (wL L).val (2 * t1.val + 1) (2 * k.val)) (offF fl (wL L).val (2 * t1.val + 1) (2 * k.val)) 2 39) (shapeCast S16 (pair1_next.sl.v1941_2 d L tab k r g1 g2 hR hin) hc16) = AccMath.accVec (rowF fl tab (wL L).val (2 * t1.val + 1) (2 * k.val)) (offF fl (wL L).val (2 * t1.val + 1) (2 * k.val)) 2 40 :=
        acc_step d L fl tab (wL L).val (2 * t1.val + 1) (2 * k.val) 0 _ hRA ⟨39, by decide⟩ ⟨2, by decide⟩ _ rfl _ hw_v1919_2 _ (k1_off73_form ..) _ hc16
      have s_A2_40 : addf (AccMath.accVec (rowF fl tab (wL L).val (2 * t1.val + 1) (2 * k.val)) (offF fl (wL L).val (2 * t1.val + 1) (2 * k.val)) 2 40) (shapeCast S16 (pair1_next.sl.v1977_2 d L tab k r g1 g2 hR hin) hc16) = AccMath.accVec (rowF fl tab (wL L).val (2 * t1.val + 1) (2 * k.val)) (offF fl (wL L).val (2 * t1.val + 1) (2 * k.val)) 2 41 :=
        acc_step d L fl tab (wL L).val (2 * t1.val + 1) (2 * k.val) 0 _ hRA ⟨40, by decide⟩ ⟨2, by decide⟩ _ rfl _ hw_v1955_2 _ (k1_off74_form ..) _ hc16
      have s_A2_41 : addf (AccMath.accVec (rowF fl tab (wL L).val (2 * t1.val + 1) (2 * k.val)) (offF fl (wL L).val (2 * t1.val + 1) (2 * k.val)) 2 41) (shapeCast S16 (pair1_next.sl.v2013_2 d L tab k r g1 g2 hR hin) hc16) = AccMath.accVec (rowF fl tab (wL L).val (2 * t1.val + 1) (2 * k.val)) (offF fl (wL L).val (2 * t1.val + 1) (2 * k.val)) 2 42 :=
        acc_step d L fl tab (wL L).val (2 * t1.val + 1) (2 * k.val) 0 _ hRA ⟨41, by decide⟩ ⟨2, by decide⟩ _ rfl _ hw_v1991_2 _ (k1_off75_form ..) _ hc16
      have s_A2_42 : addf (AccMath.accVec (rowF fl tab (wL L).val (2 * t1.val + 1) (2 * k.val)) (offF fl (wL L).val (2 * t1.val + 1) (2 * k.val)) 2 42) (shapeCast S16 (pair1_next.sl.v2049_2 d L tab k r g1 g2 hR hin) hc16) = AccMath.accVec (rowF fl tab (wL L).val (2 * t1.val + 1) (2 * k.val)) (offF fl (wL L).val (2 * t1.val + 1) (2 * k.val)) 2 43 :=
        acc_step d L fl tab (wL L).val (2 * t1.val + 1) (2 * k.val) 0 _ hRA ⟨42, by decide⟩ ⟨2, by decide⟩ _ rfl _ hw_v2027_2 _ (k1_off76_form ..) _ hc16
      have s_A2_43 : addf (AccMath.accVec (rowF fl tab (wL L).val (2 * t1.val + 1) (2 * k.val)) (offF fl (wL L).val (2 * t1.val + 1) (2 * k.val)) 2 43) (shapeCast S16 (pair1_next.sl.v2085_2 d L tab k r g1 g2 hR hin) hc16) = AccMath.accVec (rowF fl tab (wL L).val (2 * t1.val + 1) (2 * k.val)) (offF fl (wL L).val (2 * t1.val + 1) (2 * k.val)) 2 44 :=
        acc_step d L fl tab (wL L).val (2 * t1.val + 1) (2 * k.val) 0 _ hRA ⟨43, by decide⟩ ⟨2, by decide⟩ _ rfl _ hw_v2063_2 _ (k1_off77_form ..) _ hc16
      have s_A2_44 : addf (AccMath.accVec (rowF fl tab (wL L).val (2 * t1.val + 1) (2 * k.val)) (offF fl (wL L).val (2 * t1.val + 1) (2 * k.val)) 2 44) (shapeCast S16 (pair1_next.sl.v2121_2 d L tab k r g1 g2 hR hin) hc16) = AccMath.accVec (rowF fl tab (wL L).val (2 * t1.val + 1) (2 * k.val)) (offF fl (wL L).val (2 * t1.val + 1) (2 * k.val)) 2 45 :=
        acc_step d L fl tab (wL L).val (2 * t1.val + 1) (2 * k.val) 0 _ hRA ⟨44, by decide⟩ ⟨2, by decide⟩ _ rfl _ hw_v2099_2 _ (k1_off78_form ..) _ hc16
      have s_A2_45 : addf (AccMath.accVec (rowF fl tab (wL L).val (2 * t1.val + 1) (2 * k.val)) (offF fl (wL L).val (2 * t1.val + 1) (2 * k.val)) 2 45) (shapeCast S16 (pair1_next.sl.v2157_2 d L tab k r g1 g2 hR hin) hc16) = AccMath.accVec (rowF fl tab (wL L).val (2 * t1.val + 1) (2 * k.val)) (offF fl (wL L).val (2 * t1.val + 1) (2 * k.val)) 2 46 :=
        acc_step d L fl tab (wL L).val (2 * t1.val + 1) (2 * k.val) 0 _ hRA ⟨45, by decide⟩ ⟨2, by decide⟩ _ rfl _ hw_v2135_2 _ (k1_off79_form ..) _ hc16
      have s_A2_46 : addf (AccMath.accVec (rowF fl tab (wL L).val (2 * t1.val + 1) (2 * k.val)) (offF fl (wL L).val (2 * t1.val + 1) (2 * k.val)) 2 46) (shapeCast S16 (pair1_next.sl.v2193_2 d L tab k r g1 g2 hR hin) hc16) = AccMath.accVec (rowF fl tab (wL L).val (2 * t1.val + 1) (2 * k.val)) (offF fl (wL L).val (2 * t1.val + 1) (2 * k.val)) 2 47 :=
        acc_step d L fl tab (wL L).val (2 * t1.val + 1) (2 * k.val) 0 _ hRA ⟨46, by decide⟩ ⟨2, by decide⟩ _ rfl _ hw_v2171_2 _ (k1_off80_form ..) _ hc16
      have s_A2_47 : addf (AccMath.accVec (rowF fl tab (wL L).val (2 * t1.val + 1) (2 * k.val)) (offF fl (wL L).val (2 * t1.val + 1) (2 * k.val)) 2 47) (shapeCast S16 (pair1_next.sl.v2229_2 d L tab k r g1 g2 hR hin) hc16) = AccMath.accVec (rowF fl tab (wL L).val (2 * t1.val + 1) (2 * k.val)) (offF fl (wL L).val (2 * t1.val + 1) (2 * k.val)) 2 48 :=
        acc_step d L fl tab (wL L).val (2 * t1.val + 1) (2 * k.val) 0 _ hRA ⟨47, by decide⟩ ⟨2, by decide⟩ _ rfl _ hw_v2207_2 _ (k1_off81_form ..) _ hc16
      have s_A2_48 : addf (AccMath.accVec (rowF fl tab (wL L).val (2 * t1.val + 1) (2 * k.val)) (offF fl (wL L).val (2 * t1.val + 1) (2 * k.val)) 2 48) (shapeCast S16 (pair1_next.sl.v1478 d L tab k r g1 g2 hR hin) hc16) = AccMath.accVec (rowF fl tab (wL L).val (2 * t1.val + 1) (2 * k.val)) (offF fl (wL L).val (2 * t1.val + 1) (2 * k.val)) 2 49 :=
        acc_step d L fl tab (wL L).val (2 * t1.val + 1) (2 * k.val) 0 _ hRA ⟨48, by decide⟩ ⟨2, by decide⟩ _ rfl _ hw_v1456 _ (k1_off83_form ..) _ hc16
      have s_A2_49 : addf (AccMath.accVec (rowF fl tab (wL L).val (2 * t1.val + 1) (2 * k.val)) (offF fl (wL L).val (2 * t1.val + 1) (2 * k.val)) 2 49) (shapeCast S16 (pair1_next.sl.v1512 d L tab k r g1 g2 hR hin) hc16) = AccMath.accVec (rowF fl tab (wL L).val (2 * t1.val + 1) (2 * k.val)) (offF fl (wL L).val (2 * t1.val + 1) (2 * k.val)) 2 50 :=
        acc_step d L fl tab (wL L).val (2 * t1.val + 1) (2 * k.val) 0 _ hRA ⟨49, by decide⟩ ⟨2, by decide⟩ _ rfl _ hw_v1490 _ (k1_off84_form ..) _ hc16
      have hP_A2 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val)) (offF fl (wL L).val (2 * t1.val + 1) (2 * k.val)) 2 0) (shapeCast S16 (pair1_next.sl.v1689 d L tab k r g1 g2 hR hin) hc16)) (shapeCast S16 (pair1_next.sl.v1725 d L tab k r g1 g2 hR hin) hc16)) (shapeCast S16 (pair1_next.sl.v1761 d L tab k r g1 g2 hR hin) hc16)) (shapeCast S16 (pair1_next.sl.v1797 d L tab k r g1 g2 hR hin) hc16)) (shapeCast S16 (pair1_next.sl.v1833 d L tab k r g1 g2 hR hin) hc16)) (shapeCast S16 (pair1_next.sl.v1869 d L tab k r g1 g2 hR hin) hc16)) (shapeCast S16 (pair1_next.sl.v1905 d L tab k r g1 g2 hR hin) hc16)) (shapeCast S16 (pair1_next.sl.v1941 d L tab k r g1 g2 hR hin) hc16)) (shapeCast S16 (pair1_next.sl.v1977 d L tab k r g1 g2 hR hin) hc16)) (shapeCast S16 (pair1_next.sl.v2013 d L tab k r g1 g2 hR hin) hc16)) (shapeCast S16 (pair1_next.sl.v2049 d L tab k r g1 g2 hR hin) hc16)) (shapeCast S16 (pair1_next.sl.v2085 d L tab k r g1 g2 hR hin) hc16)) (shapeCast S16 (pair1_next.sl.v2121 d L tab k r g1 g2 hR hin) hc16)) (shapeCast S16 (pair1_next.sl.v2157 d L tab k r g1 g2 hR hin) hc16)) (shapeCast S16 (pair1_next.sl.v2193 d L tab k r g1 g2 hR hin) hc16)) (shapeCast S16 (pair1_next.sl.v2229 d L tab k r g1 g2 hR hin) hc16)) (shapeCast S16 (pair1_next.sl.v1689_1 d L tab k r g1 g2 hR hin) hc16)) (shapeCast S16 (pair1_next.sl.v1725_1 d L tab k r g1 g2 hR hin) hc16)) (shapeCast S16 (pair1_next.sl.v1761_1 d L tab k r g1 g2 hR hin) hc16)) (shapeCast S16 (pair1_next.sl.v1797_1 d L tab k r g1 g2 hR hin) hc16)) (shapeCast S16 (pair1_next.sl.v1833_1 d L tab k r g1 g2 hR hin) hc16)) (shapeCast S16 (pair1_next.sl.v1869_1 d L tab k r g1 g2 hR hin) hc16)) (shapeCast S16 (pair1_next.sl.v1905_1 d L tab k r g1 g2 hR hin) hc16)) (shapeCast S16 (pair1_next.sl.v1941_1 d L tab k r g1 g2 hR hin) hc16)) (shapeCast S16 (pair1_next.sl.v1977_1 d L tab k r g1 g2 hR hin) hc16)) (shapeCast S16 (pair1_next.sl.v2013_1 d L tab k r g1 g2 hR hin) hc16)) (shapeCast S16 (pair1_next.sl.v2049_1 d L tab k r g1 g2 hR hin) hc16)) (shapeCast S16 (pair1_next.sl.v2085_1 d L tab k r g1 g2 hR hin) hc16)) (shapeCast S16 (pair1_next.sl.v2121_1 d L tab k r g1 g2 hR hin) hc16)) (shapeCast S16 (pair1_next.sl.v2157_1 d L tab k r g1 g2 hR hin) hc16)) (shapeCast S16 (pair1_next.sl.v2193_1 d L tab k r g1 g2 hR hin) hc16)) (shapeCast S16 (pair1_next.sl.v2229_1 d L tab k r g1 g2 hR hin) hc16)) (shapeCast S16 (pair1_next.sl.v1689_2 d L tab k r g1 g2 hR hin) hc16)) (shapeCast S16 (pair1_next.sl.v1725_2 d L tab k r g1 g2 hR hin) hc16)) (shapeCast S16 (pair1_next.sl.v1761_2 d L tab k r g1 g2 hR hin) hc16)) (shapeCast S16 (pair1_next.sl.v1797_2 d L tab k r g1 g2 hR hin) hc16)) (shapeCast S16 (pair1_next.sl.v1833_2 d L tab k r g1 g2 hR hin) hc16)) (shapeCast S16 (pair1_next.sl.v1869_2 d L tab k r g1 g2 hR hin) hc16)) (shapeCast S16 (pair1_next.sl.v1905_2 d L tab k r g1 g2 hR hin) hc16)) (shapeCast S16 (pair1_next.sl.v1941_2 d L tab k r g1 g2 hR hin) hc16)) (shapeCast S16 (pair1_next.sl.v1977_2 d L tab k r g1 g2 hR hin) hc16)) (shapeCast S16 (pair1_next.sl.v2013_2 d L tab k r g1 g2 hR hin) hc16)) (shapeCast S16 (pair1_next.sl.v2049_2 d L tab k r g1 g2 hR hin) hc16)) (shapeCast S16 (pair1_next.sl.v2085_2 d L tab k r g1 g2 hR hin) hc16)) (shapeCast S16 (pair1_next.sl.v2121_2 d L tab k r g1 g2 hR hin) hc16)) (shapeCast S16 (pair1_next.sl.v2157_2 d L tab k r g1 g2 hR hin) hc16)) (shapeCast S16 (pair1_next.sl.v2193_2 d L tab k r g1 g2 hR hin) hc16)) (shapeCast S16 (pair1_next.sl.v2229_2 d L tab k r g1 g2 hR hin) hc16)) (shapeCast S16 (pair1_next.sl.v1478 d L tab k r g1 g2 hR hin) hc16)) (shapeCast S16 (pair1_next.sl.v1512 d L tab k r g1 g2 hR hin) hc16)) hc1 x = Spec.bagPartial fl tab (128 * (wL L).val + 16 * (2 * t1.val + 1) + (2 * k.val)) (16 * 2 + (x 2).val) 50 := fun x => by
        rw [s_A2_0, s_A2_1, s_A2_2, s_A2_3, s_A2_4, s_A2_5, s_A2_6, s_A2_7, s_A2_8, s_A2_9, s_A2_10, s_A2_11, s_A2_12, s_A2_13, s_A2_14, s_A2_15, s_A2_16, s_A2_17, s_A2_18, s_A2_19, s_A2_20, s_A2_21, s_A2_22, s_A2_23, s_A2_24, s_A2_25, s_A2_26, s_A2_27, s_A2_28, s_A2_29, s_A2_30, s_A2_31, s_A2_32, s_A2_33, s_A2_34, s_A2_35, s_A2_36, s_A2_37, s_A2_38, s_A2_39, s_A2_40, s_A2_41, s_A2_42, s_A2_43, s_A2_44, s_A2_45, s_A2_46, s_A2_47, s_A2_48, s_A2_49]
        exact payload_ok fl tab (wL L).val (2 * t1.val + 1) (2 * k.val) ⟨2, by decide⟩ hc1 x
      have s_A3_0 : addf (AccMath.accVec (rowF fl tab (wL L).val (2 * t1.val + 1) (2 * k.val)) (offF fl (wL L).val (2 * t1.val + 1) (2 * k.val)) 3 0) (shapeCast S16 (pair1_next.sl.v1697 d L tab k r g1 g2 hR hin) hc16) = AccMath.accVec (rowF fl tab (wL L).val (2 * t1.val + 1) (2 * k.val)) (offF fl (wL L).val (2 * t1.val + 1) (2 * k.val)) 3 1 :=
        acc_step d L fl tab (wL L).val (2 * t1.val + 1) (2 * k.val) 0 _ hRA ⟨0, by decide⟩ ⟨3, by decide⟩ _ rfl _ hw_v1667 _ (k1_off66_form ..) _ hc16
      have s_A3_1 : addf (AccMath.accVec (rowF fl tab (wL L).val (2 * t1.val + 1) (2 * k.val)) (offF fl (wL L).val (2 * t1.val + 1) (2 * k.val)) 3 1) (shapeCast S16 (pair1_next.sl.v1733 d L tab k r g1 g2 hR hin) hc16) = AccMath.accVec (rowF fl tab (wL L).val (2 * t1.val + 1) (2 * k.val)) (offF fl (wL L).val (2 * t1.val + 1) (2 * k.val)) 3 2 :=
        acc_step d L fl tab (wL L).val (2 * t1.val + 1) (2 * k.val) 0 _ hRA ⟨1, by decide⟩ ⟨3, by decide⟩ _ rfl _ hw_v1703 _ (k1_off67_form ..) _ hc16
      have s_A3_2 : addf (AccMath.accVec (rowF fl tab (wL L).val (2 * t1.val + 1) (2 * k.val)) (offF fl (wL L).val (2 * t1.val + 1) (2 * k.val)) 3 2) (shapeCast S16 (pair1_next.sl.v1769 d L tab k r g1 g2 hR hin) hc16) = AccMath.accVec (rowF fl tab (wL L).val (2 * t1.val + 1) (2 * k.val)) (offF fl (wL L).val (2 * t1.val + 1) (2 * k.val)) 3 3 :=
        acc_step d L fl tab (wL L).val (2 * t1.val + 1) (2 * k.val) 0 _ hRA ⟨2, by decide⟩ ⟨3, by decide⟩ _ rfl _ hw_v1739 _ (k1_off68_form ..) _ hc16
      have s_A3_3 : addf (AccMath.accVec (rowF fl tab (wL L).val (2 * t1.val + 1) (2 * k.val)) (offF fl (wL L).val (2 * t1.val + 1) (2 * k.val)) 3 3) (shapeCast S16 (pair1_next.sl.v1805 d L tab k r g1 g2 hR hin) hc16) = AccMath.accVec (rowF fl tab (wL L).val (2 * t1.val + 1) (2 * k.val)) (offF fl (wL L).val (2 * t1.val + 1) (2 * k.val)) 3 4 :=
        acc_step d L fl tab (wL L).val (2 * t1.val + 1) (2 * k.val) 0 _ hRA ⟨3, by decide⟩ ⟨3, by decide⟩ _ rfl _ hw_v1775 _ (k1_off69_form ..) _ hc16
      have s_A3_4 : addf (AccMath.accVec (rowF fl tab (wL L).val (2 * t1.val + 1) (2 * k.val)) (offF fl (wL L).val (2 * t1.val + 1) (2 * k.val)) 3 4) (shapeCast S16 (pair1_next.sl.v1841 d L tab k r g1 g2 hR hin) hc16) = AccMath.accVec (rowF fl tab (wL L).val (2 * t1.val + 1) (2 * k.val)) (offF fl (wL L).val (2 * t1.val + 1) (2 * k.val)) 3 5 :=
        acc_step d L fl tab (wL L).val (2 * t1.val + 1) (2 * k.val) 0 _ hRA ⟨4, by decide⟩ ⟨3, by decide⟩ _ rfl _ hw_v1811 _ (k1_off70_form ..) _ hc16
      have s_A3_5 : addf (AccMath.accVec (rowF fl tab (wL L).val (2 * t1.val + 1) (2 * k.val)) (offF fl (wL L).val (2 * t1.val + 1) (2 * k.val)) 3 5) (shapeCast S16 (pair1_next.sl.v1877 d L tab k r g1 g2 hR hin) hc16) = AccMath.accVec (rowF fl tab (wL L).val (2 * t1.val + 1) (2 * k.val)) (offF fl (wL L).val (2 * t1.val + 1) (2 * k.val)) 3 6 :=
        acc_step d L fl tab (wL L).val (2 * t1.val + 1) (2 * k.val) 0 _ hRA ⟨5, by decide⟩ ⟨3, by decide⟩ _ rfl _ hw_v1847 _ (k1_off71_form ..) _ hc16
      have s_A3_6 : addf (AccMath.accVec (rowF fl tab (wL L).val (2 * t1.val + 1) (2 * k.val)) (offF fl (wL L).val (2 * t1.val + 1) (2 * k.val)) 3 6) (shapeCast S16 (pair1_next.sl.v1913 d L tab k r g1 g2 hR hin) hc16) = AccMath.accVec (rowF fl tab (wL L).val (2 * t1.val + 1) (2 * k.val)) (offF fl (wL L).val (2 * t1.val + 1) (2 * k.val)) 3 7 :=
        acc_step d L fl tab (wL L).val (2 * t1.val + 1) (2 * k.val) 0 _ hRA ⟨6, by decide⟩ ⟨3, by decide⟩ _ rfl _ hw_v1883 _ (k1_off72_form ..) _ hc16
      have s_A3_7 : addf (AccMath.accVec (rowF fl tab (wL L).val (2 * t1.val + 1) (2 * k.val)) (offF fl (wL L).val (2 * t1.val + 1) (2 * k.val)) 3 7) (shapeCast S16 (pair1_next.sl.v1949 d L tab k r g1 g2 hR hin) hc16) = AccMath.accVec (rowF fl tab (wL L).val (2 * t1.val + 1) (2 * k.val)) (offF fl (wL L).val (2 * t1.val + 1) (2 * k.val)) 3 8 :=
        acc_step d L fl tab (wL L).val (2 * t1.val + 1) (2 * k.val) 0 _ hRA ⟨7, by decide⟩ ⟨3, by decide⟩ _ rfl _ hw_v1919 _ (k1_off73_form ..) _ hc16
      have s_A3_8 : addf (AccMath.accVec (rowF fl tab (wL L).val (2 * t1.val + 1) (2 * k.val)) (offF fl (wL L).val (2 * t1.val + 1) (2 * k.val)) 3 8) (shapeCast S16 (pair1_next.sl.v1985 d L tab k r g1 g2 hR hin) hc16) = AccMath.accVec (rowF fl tab (wL L).val (2 * t1.val + 1) (2 * k.val)) (offF fl (wL L).val (2 * t1.val + 1) (2 * k.val)) 3 9 :=
        acc_step d L fl tab (wL L).val (2 * t1.val + 1) (2 * k.val) 0 _ hRA ⟨8, by decide⟩ ⟨3, by decide⟩ _ rfl _ hw_v1955 _ (k1_off74_form ..) _ hc16
      have s_A3_9 : addf (AccMath.accVec (rowF fl tab (wL L).val (2 * t1.val + 1) (2 * k.val)) (offF fl (wL L).val (2 * t1.val + 1) (2 * k.val)) 3 9) (shapeCast S16 (pair1_next.sl.v2021 d L tab k r g1 g2 hR hin) hc16) = AccMath.accVec (rowF fl tab (wL L).val (2 * t1.val + 1) (2 * k.val)) (offF fl (wL L).val (2 * t1.val + 1) (2 * k.val)) 3 10 :=
        acc_step d L fl tab (wL L).val (2 * t1.val + 1) (2 * k.val) 0 _ hRA ⟨9, by decide⟩ ⟨3, by decide⟩ _ rfl _ hw_v1991 _ (k1_off75_form ..) _ hc16
      have s_A3_10 : addf (AccMath.accVec (rowF fl tab (wL L).val (2 * t1.val + 1) (2 * k.val)) (offF fl (wL L).val (2 * t1.val + 1) (2 * k.val)) 3 10) (shapeCast S16 (pair1_next.sl.v2057 d L tab k r g1 g2 hR hin) hc16) = AccMath.accVec (rowF fl tab (wL L).val (2 * t1.val + 1) (2 * k.val)) (offF fl (wL L).val (2 * t1.val + 1) (2 * k.val)) 3 11 :=
        acc_step d L fl tab (wL L).val (2 * t1.val + 1) (2 * k.val) 0 _ hRA ⟨10, by decide⟩ ⟨3, by decide⟩ _ rfl _ hw_v2027 _ (k1_off76_form ..) _ hc16
      have s_A3_11 : addf (AccMath.accVec (rowF fl tab (wL L).val (2 * t1.val + 1) (2 * k.val)) (offF fl (wL L).val (2 * t1.val + 1) (2 * k.val)) 3 11) (shapeCast S16 (pair1_next.sl.v2093 d L tab k r g1 g2 hR hin) hc16) = AccMath.accVec (rowF fl tab (wL L).val (2 * t1.val + 1) (2 * k.val)) (offF fl (wL L).val (2 * t1.val + 1) (2 * k.val)) 3 12 :=
        acc_step d L fl tab (wL L).val (2 * t1.val + 1) (2 * k.val) 0 _ hRA ⟨11, by decide⟩ ⟨3, by decide⟩ _ rfl _ hw_v2063 _ (k1_off77_form ..) _ hc16
      have s_A3_12 : addf (AccMath.accVec (rowF fl tab (wL L).val (2 * t1.val + 1) (2 * k.val)) (offF fl (wL L).val (2 * t1.val + 1) (2 * k.val)) 3 12) (shapeCast S16 (pair1_next.sl.v2129 d L tab k r g1 g2 hR hin) hc16) = AccMath.accVec (rowF fl tab (wL L).val (2 * t1.val + 1) (2 * k.val)) (offF fl (wL L).val (2 * t1.val + 1) (2 * k.val)) 3 13 :=
        acc_step d L fl tab (wL L).val (2 * t1.val + 1) (2 * k.val) 0 _ hRA ⟨12, by decide⟩ ⟨3, by decide⟩ _ rfl _ hw_v2099 _ (k1_off78_form ..) _ hc16
      have s_A3_13 : addf (AccMath.accVec (rowF fl tab (wL L).val (2 * t1.val + 1) (2 * k.val)) (offF fl (wL L).val (2 * t1.val + 1) (2 * k.val)) 3 13) (shapeCast S16 (pair1_next.sl.v2165 d L tab k r g1 g2 hR hin) hc16) = AccMath.accVec (rowF fl tab (wL L).val (2 * t1.val + 1) (2 * k.val)) (offF fl (wL L).val (2 * t1.val + 1) (2 * k.val)) 3 14 :=
        acc_step d L fl tab (wL L).val (2 * t1.val + 1) (2 * k.val) 0 _ hRA ⟨13, by decide⟩ ⟨3, by decide⟩ _ rfl _ hw_v2135 _ (k1_off79_form ..) _ hc16
      have s_A3_14 : addf (AccMath.accVec (rowF fl tab (wL L).val (2 * t1.val + 1) (2 * k.val)) (offF fl (wL L).val (2 * t1.val + 1) (2 * k.val)) 3 14) (shapeCast S16 (pair1_next.sl.v2201 d L tab k r g1 g2 hR hin) hc16) = AccMath.accVec (rowF fl tab (wL L).val (2 * t1.val + 1) (2 * k.val)) (offF fl (wL L).val (2 * t1.val + 1) (2 * k.val)) 3 15 :=
        acc_step d L fl tab (wL L).val (2 * t1.val + 1) (2 * k.val) 0 _ hRA ⟨14, by decide⟩ ⟨3, by decide⟩ _ rfl _ hw_v2171 _ (k1_off80_form ..) _ hc16
      have s_A3_15 : addf (AccMath.accVec (rowF fl tab (wL L).val (2 * t1.val + 1) (2 * k.val)) (offF fl (wL L).val (2 * t1.val + 1) (2 * k.val)) 3 15) (shapeCast S16 (pair1_next.sl.v2237 d L tab k r g1 g2 hR hin) hc16) = AccMath.accVec (rowF fl tab (wL L).val (2 * t1.val + 1) (2 * k.val)) (offF fl (wL L).val (2 * t1.val + 1) (2 * k.val)) 3 16 :=
        acc_step d L fl tab (wL L).val (2 * t1.val + 1) (2 * k.val) 0 _ hRA ⟨15, by decide⟩ ⟨3, by decide⟩ _ rfl _ hw_v2207 _ (k1_off81_form ..) _ hc16
      have s_A3_16 : addf (AccMath.accVec (rowF fl tab (wL L).val (2 * t1.val + 1) (2 * k.val)) (offF fl (wL L).val (2 * t1.val + 1) (2 * k.val)) 3 16) (shapeCast S16 (pair1_next.sl.v1697_1 d L tab k r g1 g2 hR hin) hc16) = AccMath.accVec (rowF fl tab (wL L).val (2 * t1.val + 1) (2 * k.val)) (offF fl (wL L).val (2 * t1.val + 1) (2 * k.val)) 3 17 :=
        acc_step d L fl tab (wL L).val (2 * t1.val + 1) (2 * k.val) 0 _ hRA ⟨16, by decide⟩ ⟨3, by decide⟩ _ rfl _ hw_v1667_1 _ (k1_off66_form ..) _ hc16
      have s_A3_17 : addf (AccMath.accVec (rowF fl tab (wL L).val (2 * t1.val + 1) (2 * k.val)) (offF fl (wL L).val (2 * t1.val + 1) (2 * k.val)) 3 17) (shapeCast S16 (pair1_next.sl.v1733_1 d L tab k r g1 g2 hR hin) hc16) = AccMath.accVec (rowF fl tab (wL L).val (2 * t1.val + 1) (2 * k.val)) (offF fl (wL L).val (2 * t1.val + 1) (2 * k.val)) 3 18 :=
        acc_step d L fl tab (wL L).val (2 * t1.val + 1) (2 * k.val) 0 _ hRA ⟨17, by decide⟩ ⟨3, by decide⟩ _ rfl _ hw_v1703_1 _ (k1_off67_form ..) _ hc16
      have s_A3_18 : addf (AccMath.accVec (rowF fl tab (wL L).val (2 * t1.val + 1) (2 * k.val)) (offF fl (wL L).val (2 * t1.val + 1) (2 * k.val)) 3 18) (shapeCast S16 (pair1_next.sl.v1769_1 d L tab k r g1 g2 hR hin) hc16) = AccMath.accVec (rowF fl tab (wL L).val (2 * t1.val + 1) (2 * k.val)) (offF fl (wL L).val (2 * t1.val + 1) (2 * k.val)) 3 19 :=
        acc_step d L fl tab (wL L).val (2 * t1.val + 1) (2 * k.val) 0 _ hRA ⟨18, by decide⟩ ⟨3, by decide⟩ _ rfl _ hw_v1739_1 _ (k1_off68_form ..) _ hc16
      have s_A3_19 : addf (AccMath.accVec (rowF fl tab (wL L).val (2 * t1.val + 1) (2 * k.val)) (offF fl (wL L).val (2 * t1.val + 1) (2 * k.val)) 3 19) (shapeCast S16 (pair1_next.sl.v1805_1 d L tab k r g1 g2 hR hin) hc16) = AccMath.accVec (rowF fl tab (wL L).val (2 * t1.val + 1) (2 * k.val)) (offF fl (wL L).val (2 * t1.val + 1) (2 * k.val)) 3 20 :=
        acc_step d L fl tab (wL L).val (2 * t1.val + 1) (2 * k.val) 0 _ hRA ⟨19, by decide⟩ ⟨3, by decide⟩ _ rfl _ hw_v1775_1 _ (k1_off69_form ..) _ hc16
      have s_A3_20 : addf (AccMath.accVec (rowF fl tab (wL L).val (2 * t1.val + 1) (2 * k.val)) (offF fl (wL L).val (2 * t1.val + 1) (2 * k.val)) 3 20) (shapeCast S16 (pair1_next.sl.v1841_1 d L tab k r g1 g2 hR hin) hc16) = AccMath.accVec (rowF fl tab (wL L).val (2 * t1.val + 1) (2 * k.val)) (offF fl (wL L).val (2 * t1.val + 1) (2 * k.val)) 3 21 :=
        acc_step d L fl tab (wL L).val (2 * t1.val + 1) (2 * k.val) 0 _ hRA ⟨20, by decide⟩ ⟨3, by decide⟩ _ rfl _ hw_v1811_1 _ (k1_off70_form ..) _ hc16
      have s_A3_21 : addf (AccMath.accVec (rowF fl tab (wL L).val (2 * t1.val + 1) (2 * k.val)) (offF fl (wL L).val (2 * t1.val + 1) (2 * k.val)) 3 21) (shapeCast S16 (pair1_next.sl.v1877_1 d L tab k r g1 g2 hR hin) hc16) = AccMath.accVec (rowF fl tab (wL L).val (2 * t1.val + 1) (2 * k.val)) (offF fl (wL L).val (2 * t1.val + 1) (2 * k.val)) 3 22 :=
        acc_step d L fl tab (wL L).val (2 * t1.val + 1) (2 * k.val) 0 _ hRA ⟨21, by decide⟩ ⟨3, by decide⟩ _ rfl _ hw_v1847_1 _ (k1_off71_form ..) _ hc16
      have s_A3_22 : addf (AccMath.accVec (rowF fl tab (wL L).val (2 * t1.val + 1) (2 * k.val)) (offF fl (wL L).val (2 * t1.val + 1) (2 * k.val)) 3 22) (shapeCast S16 (pair1_next.sl.v1913_1 d L tab k r g1 g2 hR hin) hc16) = AccMath.accVec (rowF fl tab (wL L).val (2 * t1.val + 1) (2 * k.val)) (offF fl (wL L).val (2 * t1.val + 1) (2 * k.val)) 3 23 :=
        acc_step d L fl tab (wL L).val (2 * t1.val + 1) (2 * k.val) 0 _ hRA ⟨22, by decide⟩ ⟨3, by decide⟩ _ rfl _ hw_v1883_1 _ (k1_off72_form ..) _ hc16
      have s_A3_23 : addf (AccMath.accVec (rowF fl tab (wL L).val (2 * t1.val + 1) (2 * k.val)) (offF fl (wL L).val (2 * t1.val + 1) (2 * k.val)) 3 23) (shapeCast S16 (pair1_next.sl.v1949_1 d L tab k r g1 g2 hR hin) hc16) = AccMath.accVec (rowF fl tab (wL L).val (2 * t1.val + 1) (2 * k.val)) (offF fl (wL L).val (2 * t1.val + 1) (2 * k.val)) 3 24 :=
        acc_step d L fl tab (wL L).val (2 * t1.val + 1) (2 * k.val) 0 _ hRA ⟨23, by decide⟩ ⟨3, by decide⟩ _ rfl _ hw_v1919_1 _ (k1_off73_form ..) _ hc16
      have s_A3_24 : addf (AccMath.accVec (rowF fl tab (wL L).val (2 * t1.val + 1) (2 * k.val)) (offF fl (wL L).val (2 * t1.val + 1) (2 * k.val)) 3 24) (shapeCast S16 (pair1_next.sl.v1985_1 d L tab k r g1 g2 hR hin) hc16) = AccMath.accVec (rowF fl tab (wL L).val (2 * t1.val + 1) (2 * k.val)) (offF fl (wL L).val (2 * t1.val + 1) (2 * k.val)) 3 25 :=
        acc_step d L fl tab (wL L).val (2 * t1.val + 1) (2 * k.val) 0 _ hRA ⟨24, by decide⟩ ⟨3, by decide⟩ _ rfl _ hw_v1955_1 _ (k1_off74_form ..) _ hc16
      have s_A3_25 : addf (AccMath.accVec (rowF fl tab (wL L).val (2 * t1.val + 1) (2 * k.val)) (offF fl (wL L).val (2 * t1.val + 1) (2 * k.val)) 3 25) (shapeCast S16 (pair1_next.sl.v2021_1 d L tab k r g1 g2 hR hin) hc16) = AccMath.accVec (rowF fl tab (wL L).val (2 * t1.val + 1) (2 * k.val)) (offF fl (wL L).val (2 * t1.val + 1) (2 * k.val)) 3 26 :=
        acc_step d L fl tab (wL L).val (2 * t1.val + 1) (2 * k.val) 0 _ hRA ⟨25, by decide⟩ ⟨3, by decide⟩ _ rfl _ hw_v1991_1 _ (k1_off75_form ..) _ hc16
      have s_A3_26 : addf (AccMath.accVec (rowF fl tab (wL L).val (2 * t1.val + 1) (2 * k.val)) (offF fl (wL L).val (2 * t1.val + 1) (2 * k.val)) 3 26) (shapeCast S16 (pair1_next.sl.v2057_1 d L tab k r g1 g2 hR hin) hc16) = AccMath.accVec (rowF fl tab (wL L).val (2 * t1.val + 1) (2 * k.val)) (offF fl (wL L).val (2 * t1.val + 1) (2 * k.val)) 3 27 :=
        acc_step d L fl tab (wL L).val (2 * t1.val + 1) (2 * k.val) 0 _ hRA ⟨26, by decide⟩ ⟨3, by decide⟩ _ rfl _ hw_v2027_1 _ (k1_off76_form ..) _ hc16
      have s_A3_27 : addf (AccMath.accVec (rowF fl tab (wL L).val (2 * t1.val + 1) (2 * k.val)) (offF fl (wL L).val (2 * t1.val + 1) (2 * k.val)) 3 27) (shapeCast S16 (pair1_next.sl.v2093_1 d L tab k r g1 g2 hR hin) hc16) = AccMath.accVec (rowF fl tab (wL L).val (2 * t1.val + 1) (2 * k.val)) (offF fl (wL L).val (2 * t1.val + 1) (2 * k.val)) 3 28 :=
        acc_step d L fl tab (wL L).val (2 * t1.val + 1) (2 * k.val) 0 _ hRA ⟨27, by decide⟩ ⟨3, by decide⟩ _ rfl _ hw_v2063_1 _ (k1_off77_form ..) _ hc16
      have s_A3_28 : addf (AccMath.accVec (rowF fl tab (wL L).val (2 * t1.val + 1) (2 * k.val)) (offF fl (wL L).val (2 * t1.val + 1) (2 * k.val)) 3 28) (shapeCast S16 (pair1_next.sl.v2129_1 d L tab k r g1 g2 hR hin) hc16) = AccMath.accVec (rowF fl tab (wL L).val (2 * t1.val + 1) (2 * k.val)) (offF fl (wL L).val (2 * t1.val + 1) (2 * k.val)) 3 29 :=
        acc_step d L fl tab (wL L).val (2 * t1.val + 1) (2 * k.val) 0 _ hRA ⟨28, by decide⟩ ⟨3, by decide⟩ _ rfl _ hw_v2099_1 _ (k1_off78_form ..) _ hc16
      have s_A3_29 : addf (AccMath.accVec (rowF fl tab (wL L).val (2 * t1.val + 1) (2 * k.val)) (offF fl (wL L).val (2 * t1.val + 1) (2 * k.val)) 3 29) (shapeCast S16 (pair1_next.sl.v2165_1 d L tab k r g1 g2 hR hin) hc16) = AccMath.accVec (rowF fl tab (wL L).val (2 * t1.val + 1) (2 * k.val)) (offF fl (wL L).val (2 * t1.val + 1) (2 * k.val)) 3 30 :=
        acc_step d L fl tab (wL L).val (2 * t1.val + 1) (2 * k.val) 0 _ hRA ⟨29, by decide⟩ ⟨3, by decide⟩ _ rfl _ hw_v2135_1 _ (k1_off79_form ..) _ hc16
      have s_A3_30 : addf (AccMath.accVec (rowF fl tab (wL L).val (2 * t1.val + 1) (2 * k.val)) (offF fl (wL L).val (2 * t1.val + 1) (2 * k.val)) 3 30) (shapeCast S16 (pair1_next.sl.v2201_1 d L tab k r g1 g2 hR hin) hc16) = AccMath.accVec (rowF fl tab (wL L).val (2 * t1.val + 1) (2 * k.val)) (offF fl (wL L).val (2 * t1.val + 1) (2 * k.val)) 3 31 :=
        acc_step d L fl tab (wL L).val (2 * t1.val + 1) (2 * k.val) 0 _ hRA ⟨30, by decide⟩ ⟨3, by decide⟩ _ rfl _ hw_v2171_1 _ (k1_off80_form ..) _ hc16
      have s_A3_31 : addf (AccMath.accVec (rowF fl tab (wL L).val (2 * t1.val + 1) (2 * k.val)) (offF fl (wL L).val (2 * t1.val + 1) (2 * k.val)) 3 31) (shapeCast S16 (pair1_next.sl.v2237_1 d L tab k r g1 g2 hR hin) hc16) = AccMath.accVec (rowF fl tab (wL L).val (2 * t1.val + 1) (2 * k.val)) (offF fl (wL L).val (2 * t1.val + 1) (2 * k.val)) 3 32 :=
        acc_step d L fl tab (wL L).val (2 * t1.val + 1) (2 * k.val) 0 _ hRA ⟨31, by decide⟩ ⟨3, by decide⟩ _ rfl _ hw_v2207_1 _ (k1_off81_form ..) _ hc16
      have s_A3_32 : addf (AccMath.accVec (rowF fl tab (wL L).val (2 * t1.val + 1) (2 * k.val)) (offF fl (wL L).val (2 * t1.val + 1) (2 * k.val)) 3 32) (shapeCast S16 (pair1_next.sl.v1697_2 d L tab k r g1 g2 hR hin) hc16) = AccMath.accVec (rowF fl tab (wL L).val (2 * t1.val + 1) (2 * k.val)) (offF fl (wL L).val (2 * t1.val + 1) (2 * k.val)) 3 33 :=
        acc_step d L fl tab (wL L).val (2 * t1.val + 1) (2 * k.val) 0 _ hRA ⟨32, by decide⟩ ⟨3, by decide⟩ _ rfl _ hw_v1667_2 _ (k1_off66_form ..) _ hc16
      have s_A3_33 : addf (AccMath.accVec (rowF fl tab (wL L).val (2 * t1.val + 1) (2 * k.val)) (offF fl (wL L).val (2 * t1.val + 1) (2 * k.val)) 3 33) (shapeCast S16 (pair1_next.sl.v1733_2 d L tab k r g1 g2 hR hin) hc16) = AccMath.accVec (rowF fl tab (wL L).val (2 * t1.val + 1) (2 * k.val)) (offF fl (wL L).val (2 * t1.val + 1) (2 * k.val)) 3 34 :=
        acc_step d L fl tab (wL L).val (2 * t1.val + 1) (2 * k.val) 0 _ hRA ⟨33, by decide⟩ ⟨3, by decide⟩ _ rfl _ hw_v1703_2 _ (k1_off67_form ..) _ hc16
      have s_A3_34 : addf (AccMath.accVec (rowF fl tab (wL L).val (2 * t1.val + 1) (2 * k.val)) (offF fl (wL L).val (2 * t1.val + 1) (2 * k.val)) 3 34) (shapeCast S16 (pair1_next.sl.v1769_2 d L tab k r g1 g2 hR hin) hc16) = AccMath.accVec (rowF fl tab (wL L).val (2 * t1.val + 1) (2 * k.val)) (offF fl (wL L).val (2 * t1.val + 1) (2 * k.val)) 3 35 :=
        acc_step d L fl tab (wL L).val (2 * t1.val + 1) (2 * k.val) 0 _ hRA ⟨34, by decide⟩ ⟨3, by decide⟩ _ rfl _ hw_v1739_2 _ (k1_off68_form ..) _ hc16
      have s_A3_35 : addf (AccMath.accVec (rowF fl tab (wL L).val (2 * t1.val + 1) (2 * k.val)) (offF fl (wL L).val (2 * t1.val + 1) (2 * k.val)) 3 35) (shapeCast S16 (pair1_next.sl.v1805_2 d L tab k r g1 g2 hR hin) hc16) = AccMath.accVec (rowF fl tab (wL L).val (2 * t1.val + 1) (2 * k.val)) (offF fl (wL L).val (2 * t1.val + 1) (2 * k.val)) 3 36 :=
        acc_step d L fl tab (wL L).val (2 * t1.val + 1) (2 * k.val) 0 _ hRA ⟨35, by decide⟩ ⟨3, by decide⟩ _ rfl _ hw_v1775_2 _ (k1_off69_form ..) _ hc16
      have s_A3_36 : addf (AccMath.accVec (rowF fl tab (wL L).val (2 * t1.val + 1) (2 * k.val)) (offF fl (wL L).val (2 * t1.val + 1) (2 * k.val)) 3 36) (shapeCast S16 (pair1_next.sl.v1841_2 d L tab k r g1 g2 hR hin) hc16) = AccMath.accVec (rowF fl tab (wL L).val (2 * t1.val + 1) (2 * k.val)) (offF fl (wL L).val (2 * t1.val + 1) (2 * k.val)) 3 37 :=
        acc_step d L fl tab (wL L).val (2 * t1.val + 1) (2 * k.val) 0 _ hRA ⟨36, by decide⟩ ⟨3, by decide⟩ _ rfl _ hw_v1811_2 _ (k1_off70_form ..) _ hc16
      have s_A3_37 : addf (AccMath.accVec (rowF fl tab (wL L).val (2 * t1.val + 1) (2 * k.val)) (offF fl (wL L).val (2 * t1.val + 1) (2 * k.val)) 3 37) (shapeCast S16 (pair1_next.sl.v1877_2 d L tab k r g1 g2 hR hin) hc16) = AccMath.accVec (rowF fl tab (wL L).val (2 * t1.val + 1) (2 * k.val)) (offF fl (wL L).val (2 * t1.val + 1) (2 * k.val)) 3 38 :=
        acc_step d L fl tab (wL L).val (2 * t1.val + 1) (2 * k.val) 0 _ hRA ⟨37, by decide⟩ ⟨3, by decide⟩ _ rfl _ hw_v1847_2 _ (k1_off71_form ..) _ hc16
      have s_A3_38 : addf (AccMath.accVec (rowF fl tab (wL L).val (2 * t1.val + 1) (2 * k.val)) (offF fl (wL L).val (2 * t1.val + 1) (2 * k.val)) 3 38) (shapeCast S16 (pair1_next.sl.v1913_2 d L tab k r g1 g2 hR hin) hc16) = AccMath.accVec (rowF fl tab (wL L).val (2 * t1.val + 1) (2 * k.val)) (offF fl (wL L).val (2 * t1.val + 1) (2 * k.val)) 3 39 :=
        acc_step d L fl tab (wL L).val (2 * t1.val + 1) (2 * k.val) 0 _ hRA ⟨38, by decide⟩ ⟨3, by decide⟩ _ rfl _ hw_v1883_2 _ (k1_off72_form ..) _ hc16
      have s_A3_39 : addf (AccMath.accVec (rowF fl tab (wL L).val (2 * t1.val + 1) (2 * k.val)) (offF fl (wL L).val (2 * t1.val + 1) (2 * k.val)) 3 39) (shapeCast S16 (pair1_next.sl.v1949_2 d L tab k r g1 g2 hR hin) hc16) = AccMath.accVec (rowF fl tab (wL L).val (2 * t1.val + 1) (2 * k.val)) (offF fl (wL L).val (2 * t1.val + 1) (2 * k.val)) 3 40 :=
        acc_step d L fl tab (wL L).val (2 * t1.val + 1) (2 * k.val) 0 _ hRA ⟨39, by decide⟩ ⟨3, by decide⟩ _ rfl _ hw_v1919_2 _ (k1_off73_form ..) _ hc16
      have s_A3_40 : addf (AccMath.accVec (rowF fl tab (wL L).val (2 * t1.val + 1) (2 * k.val)) (offF fl (wL L).val (2 * t1.val + 1) (2 * k.val)) 3 40) (shapeCast S16 (pair1_next.sl.v1985_2 d L tab k r g1 g2 hR hin) hc16) = AccMath.accVec (rowF fl tab (wL L).val (2 * t1.val + 1) (2 * k.val)) (offF fl (wL L).val (2 * t1.val + 1) (2 * k.val)) 3 41 :=
        acc_step d L fl tab (wL L).val (2 * t1.val + 1) (2 * k.val) 0 _ hRA ⟨40, by decide⟩ ⟨3, by decide⟩ _ rfl _ hw_v1955_2 _ (k1_off74_form ..) _ hc16
      have s_A3_41 : addf (AccMath.accVec (rowF fl tab (wL L).val (2 * t1.val + 1) (2 * k.val)) (offF fl (wL L).val (2 * t1.val + 1) (2 * k.val)) 3 41) (shapeCast S16 (pair1_next.sl.v2021_2 d L tab k r g1 g2 hR hin) hc16) = AccMath.accVec (rowF fl tab (wL L).val (2 * t1.val + 1) (2 * k.val)) (offF fl (wL L).val (2 * t1.val + 1) (2 * k.val)) 3 42 :=
        acc_step d L fl tab (wL L).val (2 * t1.val + 1) (2 * k.val) 0 _ hRA ⟨41, by decide⟩ ⟨3, by decide⟩ _ rfl _ hw_v1991_2 _ (k1_off75_form ..) _ hc16
      have s_A3_42 : addf (AccMath.accVec (rowF fl tab (wL L).val (2 * t1.val + 1) (2 * k.val)) (offF fl (wL L).val (2 * t1.val + 1) (2 * k.val)) 3 42) (shapeCast S16 (pair1_next.sl.v2057_2 d L tab k r g1 g2 hR hin) hc16) = AccMath.accVec (rowF fl tab (wL L).val (2 * t1.val + 1) (2 * k.val)) (offF fl (wL L).val (2 * t1.val + 1) (2 * k.val)) 3 43 :=
        acc_step d L fl tab (wL L).val (2 * t1.val + 1) (2 * k.val) 0 _ hRA ⟨42, by decide⟩ ⟨3, by decide⟩ _ rfl _ hw_v2027_2 _ (k1_off76_form ..) _ hc16
      have s_A3_43 : addf (AccMath.accVec (rowF fl tab (wL L).val (2 * t1.val + 1) (2 * k.val)) (offF fl (wL L).val (2 * t1.val + 1) (2 * k.val)) 3 43) (shapeCast S16 (pair1_next.sl.v2093_2 d L tab k r g1 g2 hR hin) hc16) = AccMath.accVec (rowF fl tab (wL L).val (2 * t1.val + 1) (2 * k.val)) (offF fl (wL L).val (2 * t1.val + 1) (2 * k.val)) 3 44 :=
        acc_step d L fl tab (wL L).val (2 * t1.val + 1) (2 * k.val) 0 _ hRA ⟨43, by decide⟩ ⟨3, by decide⟩ _ rfl _ hw_v2063_2 _ (k1_off77_form ..) _ hc16
      have s_A3_44 : addf (AccMath.accVec (rowF fl tab (wL L).val (2 * t1.val + 1) (2 * k.val)) (offF fl (wL L).val (2 * t1.val + 1) (2 * k.val)) 3 44) (shapeCast S16 (pair1_next.sl.v2129_2 d L tab k r g1 g2 hR hin) hc16) = AccMath.accVec (rowF fl tab (wL L).val (2 * t1.val + 1) (2 * k.val)) (offF fl (wL L).val (2 * t1.val + 1) (2 * k.val)) 3 45 :=
        acc_step d L fl tab (wL L).val (2 * t1.val + 1) (2 * k.val) 0 _ hRA ⟨44, by decide⟩ ⟨3, by decide⟩ _ rfl _ hw_v2099_2 _ (k1_off78_form ..) _ hc16
      have s_A3_45 : addf (AccMath.accVec (rowF fl tab (wL L).val (2 * t1.val + 1) (2 * k.val)) (offF fl (wL L).val (2 * t1.val + 1) (2 * k.val)) 3 45) (shapeCast S16 (pair1_next.sl.v2165_2 d L tab k r g1 g2 hR hin) hc16) = AccMath.accVec (rowF fl tab (wL L).val (2 * t1.val + 1) (2 * k.val)) (offF fl (wL L).val (2 * t1.val + 1) (2 * k.val)) 3 46 :=
        acc_step d L fl tab (wL L).val (2 * t1.val + 1) (2 * k.val) 0 _ hRA ⟨45, by decide⟩ ⟨3, by decide⟩ _ rfl _ hw_v2135_2 _ (k1_off79_form ..) _ hc16
      have s_A3_46 : addf (AccMath.accVec (rowF fl tab (wL L).val (2 * t1.val + 1) (2 * k.val)) (offF fl (wL L).val (2 * t1.val + 1) (2 * k.val)) 3 46) (shapeCast S16 (pair1_next.sl.v2201_2 d L tab k r g1 g2 hR hin) hc16) = AccMath.accVec (rowF fl tab (wL L).val (2 * t1.val + 1) (2 * k.val)) (offF fl (wL L).val (2 * t1.val + 1) (2 * k.val)) 3 47 :=
        acc_step d L fl tab (wL L).val (2 * t1.val + 1) (2 * k.val) 0 _ hRA ⟨46, by decide⟩ ⟨3, by decide⟩ _ rfl _ hw_v2171_2 _ (k1_off80_form ..) _ hc16
      have s_A3_47 : addf (AccMath.accVec (rowF fl tab (wL L).val (2 * t1.val + 1) (2 * k.val)) (offF fl (wL L).val (2 * t1.val + 1) (2 * k.val)) 3 47) (shapeCast S16 (pair1_next.sl.v2237_2 d L tab k r g1 g2 hR hin) hc16) = AccMath.accVec (rowF fl tab (wL L).val (2 * t1.val + 1) (2 * k.val)) (offF fl (wL L).val (2 * t1.val + 1) (2 * k.val)) 3 48 :=
        acc_step d L fl tab (wL L).val (2 * t1.val + 1) (2 * k.val) 0 _ hRA ⟨47, by decide⟩ ⟨3, by decide⟩ _ rfl _ hw_v2207_2 _ (k1_off81_form ..) _ hc16
      have s_A3_48 : addf (AccMath.accVec (rowF fl tab (wL L).val (2 * t1.val + 1) (2 * k.val)) (offF fl (wL L).val (2 * t1.val + 1) (2 * k.val)) 3 48) (shapeCast S16 (pair1_next.sl.v1486 d L tab k r g1 g2 hR hin) hc16) = AccMath.accVec (rowF fl tab (wL L).val (2 * t1.val + 1) (2 * k.val)) (offF fl (wL L).val (2 * t1.val + 1) (2 * k.val)) 3 49 :=
        acc_step d L fl tab (wL L).val (2 * t1.val + 1) (2 * k.val) 0 _ hRA ⟨48, by decide⟩ ⟨3, by decide⟩ _ rfl _ hw_v1456 _ (k1_off83_form ..) _ hc16
      have s_A3_49 : addf (AccMath.accVec (rowF fl tab (wL L).val (2 * t1.val + 1) (2 * k.val)) (offF fl (wL L).val (2 * t1.val + 1) (2 * k.val)) 3 49) (shapeCast S16 (pair1_next.sl.v1520 d L tab k r g1 g2 hR hin) hc16) = AccMath.accVec (rowF fl tab (wL L).val (2 * t1.val + 1) (2 * k.val)) (offF fl (wL L).val (2 * t1.val + 1) (2 * k.val)) 3 50 :=
        acc_step d L fl tab (wL L).val (2 * t1.val + 1) (2 * k.val) 0 _ hRA ⟨49, by decide⟩ ⟨3, by decide⟩ _ rfl _ hw_v1490 _ (k1_off84_form ..) _ hc16
      have hP_A3 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val)) (offF fl (wL L).val (2 * t1.val + 1) (2 * k.val)) 3 0) (shapeCast S16 (pair1_next.sl.v1697 d L tab k r g1 g2 hR hin) hc16)) (shapeCast S16 (pair1_next.sl.v1733 d L tab k r g1 g2 hR hin) hc16)) (shapeCast S16 (pair1_next.sl.v1769 d L tab k r g1 g2 hR hin) hc16)) (shapeCast S16 (pair1_next.sl.v1805 d L tab k r g1 g2 hR hin) hc16)) (shapeCast S16 (pair1_next.sl.v1841 d L tab k r g1 g2 hR hin) hc16)) (shapeCast S16 (pair1_next.sl.v1877 d L tab k r g1 g2 hR hin) hc16)) (shapeCast S16 (pair1_next.sl.v1913 d L tab k r g1 g2 hR hin) hc16)) (shapeCast S16 (pair1_next.sl.v1949 d L tab k r g1 g2 hR hin) hc16)) (shapeCast S16 (pair1_next.sl.v1985 d L tab k r g1 g2 hR hin) hc16)) (shapeCast S16 (pair1_next.sl.v2021 d L tab k r g1 g2 hR hin) hc16)) (shapeCast S16 (pair1_next.sl.v2057 d L tab k r g1 g2 hR hin) hc16)) (shapeCast S16 (pair1_next.sl.v2093 d L tab k r g1 g2 hR hin) hc16)) (shapeCast S16 (pair1_next.sl.v2129 d L tab k r g1 g2 hR hin) hc16)) (shapeCast S16 (pair1_next.sl.v2165 d L tab k r g1 g2 hR hin) hc16)) (shapeCast S16 (pair1_next.sl.v2201 d L tab k r g1 g2 hR hin) hc16)) (shapeCast S16 (pair1_next.sl.v2237 d L tab k r g1 g2 hR hin) hc16)) (shapeCast S16 (pair1_next.sl.v1697_1 d L tab k r g1 g2 hR hin) hc16)) (shapeCast S16 (pair1_next.sl.v1733_1 d L tab k r g1 g2 hR hin) hc16)) (shapeCast S16 (pair1_next.sl.v1769_1 d L tab k r g1 g2 hR hin) hc16)) (shapeCast S16 (pair1_next.sl.v1805_1 d L tab k r g1 g2 hR hin) hc16)) (shapeCast S16 (pair1_next.sl.v1841_1 d L tab k r g1 g2 hR hin) hc16)) (shapeCast S16 (pair1_next.sl.v1877_1 d L tab k r g1 g2 hR hin) hc16)) (shapeCast S16 (pair1_next.sl.v1913_1 d L tab k r g1 g2 hR hin) hc16)) (shapeCast S16 (pair1_next.sl.v1949_1 d L tab k r g1 g2 hR hin) hc16)) (shapeCast S16 (pair1_next.sl.v1985_1 d L tab k r g1 g2 hR hin) hc16)) (shapeCast S16 (pair1_next.sl.v2021_1 d L tab k r g1 g2 hR hin) hc16)) (shapeCast S16 (pair1_next.sl.v2057_1 d L tab k r g1 g2 hR hin) hc16)) (shapeCast S16 (pair1_next.sl.v2093_1 d L tab k r g1 g2 hR hin) hc16)) (shapeCast S16 (pair1_next.sl.v2129_1 d L tab k r g1 g2 hR hin) hc16)) (shapeCast S16 (pair1_next.sl.v2165_1 d L tab k r g1 g2 hR hin) hc16)) (shapeCast S16 (pair1_next.sl.v2201_1 d L tab k r g1 g2 hR hin) hc16)) (shapeCast S16 (pair1_next.sl.v2237_1 d L tab k r g1 g2 hR hin) hc16)) (shapeCast S16 (pair1_next.sl.v1697_2 d L tab k r g1 g2 hR hin) hc16)) (shapeCast S16 (pair1_next.sl.v1733_2 d L tab k r g1 g2 hR hin) hc16)) (shapeCast S16 (pair1_next.sl.v1769_2 d L tab k r g1 g2 hR hin) hc16)) (shapeCast S16 (pair1_next.sl.v1805_2 d L tab k r g1 g2 hR hin) hc16)) (shapeCast S16 (pair1_next.sl.v1841_2 d L tab k r g1 g2 hR hin) hc16)) (shapeCast S16 (pair1_next.sl.v1877_2 d L tab k r g1 g2 hR hin) hc16)) (shapeCast S16 (pair1_next.sl.v1913_2 d L tab k r g1 g2 hR hin) hc16)) (shapeCast S16 (pair1_next.sl.v1949_2 d L tab k r g1 g2 hR hin) hc16)) (shapeCast S16 (pair1_next.sl.v1985_2 d L tab k r g1 g2 hR hin) hc16)) (shapeCast S16 (pair1_next.sl.v2021_2 d L tab k r g1 g2 hR hin) hc16)) (shapeCast S16 (pair1_next.sl.v2057_2 d L tab k r g1 g2 hR hin) hc16)) (shapeCast S16 (pair1_next.sl.v2093_2 d L tab k r g1 g2 hR hin) hc16)) (shapeCast S16 (pair1_next.sl.v2129_2 d L tab k r g1 g2 hR hin) hc16)) (shapeCast S16 (pair1_next.sl.v2165_2 d L tab k r g1 g2 hR hin) hc16)) (shapeCast S16 (pair1_next.sl.v2201_2 d L tab k r g1 g2 hR hin) hc16)) (shapeCast S16 (pair1_next.sl.v2237_2 d L tab k r g1 g2 hR hin) hc16)) (shapeCast S16 (pair1_next.sl.v1486 d L tab k r g1 g2 hR hin) hc16)) (shapeCast S16 (pair1_next.sl.v1520 d L tab k r g1 g2 hR hin) hc16)) hc1 x = Spec.bagPartial fl tab (128 * (wL L).val + 16 * (2 * t1.val + 1) + (2 * k.val)) (16 * 3 + (x 2).val) 50 := fun x => by
        rw [s_A3_0, s_A3_1, s_A3_2, s_A3_3, s_A3_4, s_A3_5, s_A3_6, s_A3_7, s_A3_8, s_A3_9, s_A3_10, s_A3_11, s_A3_12, s_A3_13, s_A3_14, s_A3_15, s_A3_16, s_A3_17, s_A3_18, s_A3_19, s_A3_20, s_A3_21, s_A3_22, s_A3_23, s_A3_24, s_A3_25, s_A3_26, s_A3_27, s_A3_28, s_A3_29, s_A3_30, s_A3_31, s_A3_32, s_A3_33, s_A3_34, s_A3_35, s_A3_36, s_A3_37, s_A3_38, s_A3_39, s_A3_40, s_A3_41, s_A3_42, s_A3_43, s_A3_44, s_A3_45, s_A3_46, s_A3_47, s_A3_48, s_A3_49]
        exact payload_ok fl tab (wL L).val (2 * t1.val + 1) (2 * k.val) ⟨3, by decide⟩ hc1 x
      have s_B0_0 : addf (AccMath.accVec (rowF fl tab (wL L).val (2 * t1.val + 1) (2 * k.val + 1)) (offF fl (wL L).val (2 * t1.val + 1) (2 * k.val + 1)) 0 0) (shapeCast S16 (pair1_next.sl.v1673_3 d L tab t1 k r g1 g2 hR hin h10) hc16) = AccMath.accVec (rowF fl tab (wL L).val (2 * t1.val + 1) (2 * k.val + 1)) (offF fl (wL L).val (2 * t1.val + 1) (2 * k.val + 1)) 0 1 :=
        acc_step d L fl tab (wL L).val (2 * t1.val + 1) (2 * k.val + 1) 1 _ hRB ⟨0, by decide⟩ ⟨0, by decide⟩ _ rfl _ hw_v1667_3 _ (k1_off93_form ..) _ hc16
      have s_B0_1 : addf (AccMath.accVec (rowF fl tab (wL L).val (2 * t1.val + 1) (2 * k.val + 1)) (offF fl (wL L).val (2 * t1.val + 1) (2 * k.val + 1)) 0 1) (shapeCast S16 (pair1_next.sl.v1709_3 d L tab t1 k r g1 g2 hR hin h10) hc16) = AccMath.accVec (rowF fl tab (wL L).val (2 * t1.val + 1) (2 * k.val + 1)) (offF fl (wL L).val (2 * t1.val + 1) (2 * k.val + 1)) 0 2 :=
        acc_step d L fl tab (wL L).val (2 * t1.val + 1) (2 * k.val + 1) 1 _ hRB ⟨1, by decide⟩ ⟨0, by decide⟩ _ rfl _ hw_v1703_3 _ (k1_off94_form ..) _ hc16
      have s_B0_2 : addf (AccMath.accVec (rowF fl tab (wL L).val (2 * t1.val + 1) (2 * k.val + 1)) (offF fl (wL L).val (2 * t1.val + 1) (2 * k.val + 1)) 0 2) (shapeCast S16 (pair1_next.sl.v1745_3 d L tab t1 k r g1 g2 hR hin h10) hc16) = AccMath.accVec (rowF fl tab (wL L).val (2 * t1.val + 1) (2 * k.val + 1)) (offF fl (wL L).val (2 * t1.val + 1) (2 * k.val + 1)) 0 3 :=
        acc_step d L fl tab (wL L).val (2 * t1.val + 1) (2 * k.val + 1) 1 _ hRB ⟨2, by decide⟩ ⟨0, by decide⟩ _ rfl _ hw_v1739_3 _ (k1_off95_form ..) _ hc16
      have s_B0_3 : addf (AccMath.accVec (rowF fl tab (wL L).val (2 * t1.val + 1) (2 * k.val + 1)) (offF fl (wL L).val (2 * t1.val + 1) (2 * k.val + 1)) 0 3) (shapeCast S16 (pair1_next.sl.v1781_3 d L tab t1 k r g1 g2 hR hin h10) hc16) = AccMath.accVec (rowF fl tab (wL L).val (2 * t1.val + 1) (2 * k.val + 1)) (offF fl (wL L).val (2 * t1.val + 1) (2 * k.val + 1)) 0 4 :=
        acc_step d L fl tab (wL L).val (2 * t1.val + 1) (2 * k.val + 1) 1 _ hRB ⟨3, by decide⟩ ⟨0, by decide⟩ _ rfl _ hw_v1775_3 _ (k1_off96_form ..) _ hc16
      have s_B0_4 : addf (AccMath.accVec (rowF fl tab (wL L).val (2 * t1.val + 1) (2 * k.val + 1)) (offF fl (wL L).val (2 * t1.val + 1) (2 * k.val + 1)) 0 4) (shapeCast S16 (pair1_next.sl.v1817_3 d L tab t1 k r g1 g2 hR hin h10) hc16) = AccMath.accVec (rowF fl tab (wL L).val (2 * t1.val + 1) (2 * k.val + 1)) (offF fl (wL L).val (2 * t1.val + 1) (2 * k.val + 1)) 0 5 :=
        acc_step d L fl tab (wL L).val (2 * t1.val + 1) (2 * k.val + 1) 1 _ hRB ⟨4, by decide⟩ ⟨0, by decide⟩ _ rfl _ hw_v1811_3 _ (k1_off97_form ..) _ hc16
      have s_B0_5 : addf (AccMath.accVec (rowF fl tab (wL L).val (2 * t1.val + 1) (2 * k.val + 1)) (offF fl (wL L).val (2 * t1.val + 1) (2 * k.val + 1)) 0 5) (shapeCast S16 (pair1_next.sl.v1853_3 d L tab t1 k r g1 g2 hR hin h10) hc16) = AccMath.accVec (rowF fl tab (wL L).val (2 * t1.val + 1) (2 * k.val + 1)) (offF fl (wL L).val (2 * t1.val + 1) (2 * k.val + 1)) 0 6 :=
        acc_step d L fl tab (wL L).val (2 * t1.val + 1) (2 * k.val + 1) 1 _ hRB ⟨5, by decide⟩ ⟨0, by decide⟩ _ rfl _ hw_v1847_3 _ (k1_off98_form ..) _ hc16
      have s_B0_6 : addf (AccMath.accVec (rowF fl tab (wL L).val (2 * t1.val + 1) (2 * k.val + 1)) (offF fl (wL L).val (2 * t1.val + 1) (2 * k.val + 1)) 0 6) (shapeCast S16 (pair1_next.sl.v1889_3 d L tab t1 k r g1 g2 hR hin h10) hc16) = AccMath.accVec (rowF fl tab (wL L).val (2 * t1.val + 1) (2 * k.val + 1)) (offF fl (wL L).val (2 * t1.val + 1) (2 * k.val + 1)) 0 7 :=
        acc_step d L fl tab (wL L).val (2 * t1.val + 1) (2 * k.val + 1) 1 _ hRB ⟨6, by decide⟩ ⟨0, by decide⟩ _ rfl _ hw_v1883_3 _ (k1_off99_form ..) _ hc16
      have s_B0_7 : addf (AccMath.accVec (rowF fl tab (wL L).val (2 * t1.val + 1) (2 * k.val + 1)) (offF fl (wL L).val (2 * t1.val + 1) (2 * k.val + 1)) 0 7) (shapeCast S16 (pair1_next.sl.v1925_3 d L tab t1 k r g1 g2 hR hin h10) hc16) = AccMath.accVec (rowF fl tab (wL L).val (2 * t1.val + 1) (2 * k.val + 1)) (offF fl (wL L).val (2 * t1.val + 1) (2 * k.val + 1)) 0 8 :=
        acc_step d L fl tab (wL L).val (2 * t1.val + 1) (2 * k.val + 1) 1 _ hRB ⟨7, by decide⟩ ⟨0, by decide⟩ _ rfl _ hw_v1919_3 _ (k1_off100_form ..) _ hc16
      have s_B0_8 : addf (AccMath.accVec (rowF fl tab (wL L).val (2 * t1.val + 1) (2 * k.val + 1)) (offF fl (wL L).val (2 * t1.val + 1) (2 * k.val + 1)) 0 8) (shapeCast S16 (pair1_next.sl.v1961_3 d L tab t1 k r g1 g2 hR hin h10) hc16) = AccMath.accVec (rowF fl tab (wL L).val (2 * t1.val + 1) (2 * k.val + 1)) (offF fl (wL L).val (2 * t1.val + 1) (2 * k.val + 1)) 0 9 :=
        acc_step d L fl tab (wL L).val (2 * t1.val + 1) (2 * k.val + 1) 1 _ hRB ⟨8, by decide⟩ ⟨0, by decide⟩ _ rfl _ hw_v1955_3 _ (k1_off101_form ..) _ hc16
      have s_B0_9 : addf (AccMath.accVec (rowF fl tab (wL L).val (2 * t1.val + 1) (2 * k.val + 1)) (offF fl (wL L).val (2 * t1.val + 1) (2 * k.val + 1)) 0 9) (shapeCast S16 (pair1_next.sl.v1997_3 d L tab t1 k r g1 g2 hR hin h10) hc16) = AccMath.accVec (rowF fl tab (wL L).val (2 * t1.val + 1) (2 * k.val + 1)) (offF fl (wL L).val (2 * t1.val + 1) (2 * k.val + 1)) 0 10 :=
        acc_step d L fl tab (wL L).val (2 * t1.val + 1) (2 * k.val + 1) 1 _ hRB ⟨9, by decide⟩ ⟨0, by decide⟩ _ rfl _ hw_v1991_3 _ (k1_off102_form ..) _ hc16
      have s_B0_10 : addf (AccMath.accVec (rowF fl tab (wL L).val (2 * t1.val + 1) (2 * k.val + 1)) (offF fl (wL L).val (2 * t1.val + 1) (2 * k.val + 1)) 0 10) (shapeCast S16 (pair1_next.sl.v2033_3 d L tab t1 k r g1 g2 hR hin h10) hc16) = AccMath.accVec (rowF fl tab (wL L).val (2 * t1.val + 1) (2 * k.val + 1)) (offF fl (wL L).val (2 * t1.val + 1) (2 * k.val + 1)) 0 11 :=
        acc_step d L fl tab (wL L).val (2 * t1.val + 1) (2 * k.val + 1) 1 _ hRB ⟨10, by decide⟩ ⟨0, by decide⟩ _ rfl _ hw_v2027_3 _ (k1_off103_form ..) _ hc16
      have s_B0_11 : addf (AccMath.accVec (rowF fl tab (wL L).val (2 * t1.val + 1) (2 * k.val + 1)) (offF fl (wL L).val (2 * t1.val + 1) (2 * k.val + 1)) 0 11) (shapeCast S16 (pair1_next.sl.v2069_3 d L tab t1 k r g1 g2 hR hin h10) hc16) = AccMath.accVec (rowF fl tab (wL L).val (2 * t1.val + 1) (2 * k.val + 1)) (offF fl (wL L).val (2 * t1.val + 1) (2 * k.val + 1)) 0 12 :=
        acc_step d L fl tab (wL L).val (2 * t1.val + 1) (2 * k.val + 1) 1 _ hRB ⟨11, by decide⟩ ⟨0, by decide⟩ _ rfl _ hw_v2063_3 _ (k1_off104_form ..) _ hc16
      have s_B0_12 : addf (AccMath.accVec (rowF fl tab (wL L).val (2 * t1.val + 1) (2 * k.val + 1)) (offF fl (wL L).val (2 * t1.val + 1) (2 * k.val + 1)) 0 12) (shapeCast S16 (pair1_next.sl.v2105_3 d L tab t1 k r g1 g2 hR hin h10) hc16) = AccMath.accVec (rowF fl tab (wL L).val (2 * t1.val + 1) (2 * k.val + 1)) (offF fl (wL L).val (2 * t1.val + 1) (2 * k.val + 1)) 0 13 :=
        acc_step d L fl tab (wL L).val (2 * t1.val + 1) (2 * k.val + 1) 1 _ hRB ⟨12, by decide⟩ ⟨0, by decide⟩ _ rfl _ hw_v2099_3 _ (k1_off105_form ..) _ hc16
      have s_B0_13 : addf (AccMath.accVec (rowF fl tab (wL L).val (2 * t1.val + 1) (2 * k.val + 1)) (offF fl (wL L).val (2 * t1.val + 1) (2 * k.val + 1)) 0 13) (shapeCast S16 (pair1_next.sl.v2141_3 d L tab t1 k r g1 g2 hR hin h10) hc16) = AccMath.accVec (rowF fl tab (wL L).val (2 * t1.val + 1) (2 * k.val + 1)) (offF fl (wL L).val (2 * t1.val + 1) (2 * k.val + 1)) 0 14 :=
        acc_step d L fl tab (wL L).val (2 * t1.val + 1) (2 * k.val + 1) 1 _ hRB ⟨13, by decide⟩ ⟨0, by decide⟩ _ rfl _ hw_v2135_3 _ (k1_off106_form ..) _ hc16
      have s_B0_14 : addf (AccMath.accVec (rowF fl tab (wL L).val (2 * t1.val + 1) (2 * k.val + 1)) (offF fl (wL L).val (2 * t1.val + 1) (2 * k.val + 1)) 0 14) (shapeCast S16 (pair1_next.sl.v2177_3 d L tab t1 k r g1 g2 hR hin h10) hc16) = AccMath.accVec (rowF fl tab (wL L).val (2 * t1.val + 1) (2 * k.val + 1)) (offF fl (wL L).val (2 * t1.val + 1) (2 * k.val + 1)) 0 15 :=
        acc_step d L fl tab (wL L).val (2 * t1.val + 1) (2 * k.val + 1) 1 _ hRB ⟨14, by decide⟩ ⟨0, by decide⟩ _ rfl _ hw_v2171_3 _ (k1_off107_form ..) _ hc16
      have s_B0_15 : addf (AccMath.accVec (rowF fl tab (wL L).val (2 * t1.val + 1) (2 * k.val + 1)) (offF fl (wL L).val (2 * t1.val + 1) (2 * k.val + 1)) 0 15) (shapeCast S16 (pair1_next.sl.v2213_3 d L tab t1 k r g1 g2 hR hin h10) hc16) = AccMath.accVec (rowF fl tab (wL L).val (2 * t1.val + 1) (2 * k.val + 1)) (offF fl (wL L).val (2 * t1.val + 1) (2 * k.val + 1)) 0 16 :=
        acc_step d L fl tab (wL L).val (2 * t1.val + 1) (2 * k.val + 1) 1 _ hRB ⟨15, by decide⟩ ⟨0, by decide⟩ _ rfl _ hw_v2207_3 _ (k1_off108_form ..) _ hc16
      have s_B0_16 : addf (AccMath.accVec (rowF fl tab (wL L).val (2 * t1.val + 1) (2 * k.val + 1)) (offF fl (wL L).val (2 * t1.val + 1) (2 * k.val + 1)) 0 16) (shapeCast S16 (pair1_next.sl.v1673_4 d L tab t1 k r g1 g2 hR hin h10) hc16) = AccMath.accVec (rowF fl tab (wL L).val (2 * t1.val + 1) (2 * k.val + 1)) (offF fl (wL L).val (2 * t1.val + 1) (2 * k.val + 1)) 0 17 :=
        acc_step d L fl tab (wL L).val (2 * t1.val + 1) (2 * k.val + 1) 1 _ hRB ⟨16, by decide⟩ ⟨0, by decide⟩ _ rfl _ hw_v1667_4 _ (k1_off93_form ..) _ hc16
      have s_B0_17 : addf (AccMath.accVec (rowF fl tab (wL L).val (2 * t1.val + 1) (2 * k.val + 1)) (offF fl (wL L).val (2 * t1.val + 1) (2 * k.val + 1)) 0 17) (shapeCast S16 (pair1_next.sl.v1709_4 d L tab t1 k r g1 g2 hR hin h10) hc16) = AccMath.accVec (rowF fl tab (wL L).val (2 * t1.val + 1) (2 * k.val + 1)) (offF fl (wL L).val (2 * t1.val + 1) (2 * k.val + 1)) 0 18 :=
        acc_step d L fl tab (wL L).val (2 * t1.val + 1) (2 * k.val + 1) 1 _ hRB ⟨17, by decide⟩ ⟨0, by decide⟩ _ rfl _ hw_v1703_4 _ (k1_off94_form ..) _ hc16
      have s_B0_18 : addf (AccMath.accVec (rowF fl tab (wL L).val (2 * t1.val + 1) (2 * k.val + 1)) (offF fl (wL L).val (2 * t1.val + 1) (2 * k.val + 1)) 0 18) (shapeCast S16 (pair1_next.sl.v1745_4 d L tab t1 k r g1 g2 hR hin h10) hc16) = AccMath.accVec (rowF fl tab (wL L).val (2 * t1.val + 1) (2 * k.val + 1)) (offF fl (wL L).val (2 * t1.val + 1) (2 * k.val + 1)) 0 19 :=
        acc_step d L fl tab (wL L).val (2 * t1.val + 1) (2 * k.val + 1) 1 _ hRB ⟨18, by decide⟩ ⟨0, by decide⟩ _ rfl _ hw_v1739_4 _ (k1_off95_form ..) _ hc16
      have s_B0_19 : addf (AccMath.accVec (rowF fl tab (wL L).val (2 * t1.val + 1) (2 * k.val + 1)) (offF fl (wL L).val (2 * t1.val + 1) (2 * k.val + 1)) 0 19) (shapeCast S16 (pair1_next.sl.v1781_4 d L tab t1 k r g1 g2 hR hin h10) hc16) = AccMath.accVec (rowF fl tab (wL L).val (2 * t1.val + 1) (2 * k.val + 1)) (offF fl (wL L).val (2 * t1.val + 1) (2 * k.val + 1)) 0 20 :=
        acc_step d L fl tab (wL L).val (2 * t1.val + 1) (2 * k.val + 1) 1 _ hRB ⟨19, by decide⟩ ⟨0, by decide⟩ _ rfl _ hw_v1775_4 _ (k1_off96_form ..) _ hc16
      have s_B0_20 : addf (AccMath.accVec (rowF fl tab (wL L).val (2 * t1.val + 1) (2 * k.val + 1)) (offF fl (wL L).val (2 * t1.val + 1) (2 * k.val + 1)) 0 20) (shapeCast S16 (pair1_next.sl.v1817_4 d L tab t1 k r g1 g2 hR hin h10) hc16) = AccMath.accVec (rowF fl tab (wL L).val (2 * t1.val + 1) (2 * k.val + 1)) (offF fl (wL L).val (2 * t1.val + 1) (2 * k.val + 1)) 0 21 :=
        acc_step d L fl tab (wL L).val (2 * t1.val + 1) (2 * k.val + 1) 1 _ hRB ⟨20, by decide⟩ ⟨0, by decide⟩ _ rfl _ hw_v1811_4 _ (k1_off97_form ..) _ hc16
      have s_B0_21 : addf (AccMath.accVec (rowF fl tab (wL L).val (2 * t1.val + 1) (2 * k.val + 1)) (offF fl (wL L).val (2 * t1.val + 1) (2 * k.val + 1)) 0 21) (shapeCast S16 (pair1_next.sl.v1853_4 d L tab t1 k r g1 g2 hR hin h10) hc16) = AccMath.accVec (rowF fl tab (wL L).val (2 * t1.val + 1) (2 * k.val + 1)) (offF fl (wL L).val (2 * t1.val + 1) (2 * k.val + 1)) 0 22 :=
        acc_step d L fl tab (wL L).val (2 * t1.val + 1) (2 * k.val + 1) 1 _ hRB ⟨21, by decide⟩ ⟨0, by decide⟩ _ rfl _ hw_v1847_4 _ (k1_off98_form ..) _ hc16
      have s_B0_22 : addf (AccMath.accVec (rowF fl tab (wL L).val (2 * t1.val + 1) (2 * k.val + 1)) (offF fl (wL L).val (2 * t1.val + 1) (2 * k.val + 1)) 0 22) (shapeCast S16 (pair1_next.sl.v1889_4 d L tab t1 k r g1 g2 hR hin h10) hc16) = AccMath.accVec (rowF fl tab (wL L).val (2 * t1.val + 1) (2 * k.val + 1)) (offF fl (wL L).val (2 * t1.val + 1) (2 * k.val + 1)) 0 23 :=
        acc_step d L fl tab (wL L).val (2 * t1.val + 1) (2 * k.val + 1) 1 _ hRB ⟨22, by decide⟩ ⟨0, by decide⟩ _ rfl _ hw_v1883_4 _ (k1_off99_form ..) _ hc16
      have s_B0_23 : addf (AccMath.accVec (rowF fl tab (wL L).val (2 * t1.val + 1) (2 * k.val + 1)) (offF fl (wL L).val (2 * t1.val + 1) (2 * k.val + 1)) 0 23) (shapeCast S16 (pair1_next.sl.v1925_4 d L tab t1 k r g1 g2 hR hin h10) hc16) = AccMath.accVec (rowF fl tab (wL L).val (2 * t1.val + 1) (2 * k.val + 1)) (offF fl (wL L).val (2 * t1.val + 1) (2 * k.val + 1)) 0 24 :=
        acc_step d L fl tab (wL L).val (2 * t1.val + 1) (2 * k.val + 1) 1 _ hRB ⟨23, by decide⟩ ⟨0, by decide⟩ _ rfl _ hw_v1919_4 _ (k1_off100_form ..) _ hc16
      have s_B0_24 : addf (AccMath.accVec (rowF fl tab (wL L).val (2 * t1.val + 1) (2 * k.val + 1)) (offF fl (wL L).val (2 * t1.val + 1) (2 * k.val + 1)) 0 24) (shapeCast S16 (pair1_next.sl.v1961_4 d L tab t1 k r g1 g2 hR hin h10) hc16) = AccMath.accVec (rowF fl tab (wL L).val (2 * t1.val + 1) (2 * k.val + 1)) (offF fl (wL L).val (2 * t1.val + 1) (2 * k.val + 1)) 0 25 :=
        acc_step d L fl tab (wL L).val (2 * t1.val + 1) (2 * k.val + 1) 1 _ hRB ⟨24, by decide⟩ ⟨0, by decide⟩ _ rfl _ hw_v1955_4 _ (k1_off101_form ..) _ hc16
      have s_B0_25 : addf (AccMath.accVec (rowF fl tab (wL L).val (2 * t1.val + 1) (2 * k.val + 1)) (offF fl (wL L).val (2 * t1.val + 1) (2 * k.val + 1)) 0 25) (shapeCast S16 (pair1_next.sl.v1997_4 d L tab t1 k r g1 g2 hR hin h10) hc16) = AccMath.accVec (rowF fl tab (wL L).val (2 * t1.val + 1) (2 * k.val + 1)) (offF fl (wL L).val (2 * t1.val + 1) (2 * k.val + 1)) 0 26 :=
        acc_step d L fl tab (wL L).val (2 * t1.val + 1) (2 * k.val + 1) 1 _ hRB ⟨25, by decide⟩ ⟨0, by decide⟩ _ rfl _ hw_v1991_4 _ (k1_off102_form ..) _ hc16
      have s_B0_26 : addf (AccMath.accVec (rowF fl tab (wL L).val (2 * t1.val + 1) (2 * k.val + 1)) (offF fl (wL L).val (2 * t1.val + 1) (2 * k.val + 1)) 0 26) (shapeCast S16 (pair1_next.sl.v2033_4 d L tab t1 k r g1 g2 hR hin h10) hc16) = AccMath.accVec (rowF fl tab (wL L).val (2 * t1.val + 1) (2 * k.val + 1)) (offF fl (wL L).val (2 * t1.val + 1) (2 * k.val + 1)) 0 27 :=
        acc_step d L fl tab (wL L).val (2 * t1.val + 1) (2 * k.val + 1) 1 _ hRB ⟨26, by decide⟩ ⟨0, by decide⟩ _ rfl _ hw_v2027_4 _ (k1_off103_form ..) _ hc16
      have s_B0_27 : addf (AccMath.accVec (rowF fl tab (wL L).val (2 * t1.val + 1) (2 * k.val + 1)) (offF fl (wL L).val (2 * t1.val + 1) (2 * k.val + 1)) 0 27) (shapeCast S16 (pair1_next.sl.v2069_4 d L tab t1 k r g1 g2 hR hin h10) hc16) = AccMath.accVec (rowF fl tab (wL L).val (2 * t1.val + 1) (2 * k.val + 1)) (offF fl (wL L).val (2 * t1.val + 1) (2 * k.val + 1)) 0 28 :=
        acc_step d L fl tab (wL L).val (2 * t1.val + 1) (2 * k.val + 1) 1 _ hRB ⟨27, by decide⟩ ⟨0, by decide⟩ _ rfl _ hw_v2063_4 _ (k1_off104_form ..) _ hc16
      have s_B0_28 : addf (AccMath.accVec (rowF fl tab (wL L).val (2 * t1.val + 1) (2 * k.val + 1)) (offF fl (wL L).val (2 * t1.val + 1) (2 * k.val + 1)) 0 28) (shapeCast S16 (pair1_next.sl.v2105_4 d L tab t1 k r g1 g2 hR hin h10) hc16) = AccMath.accVec (rowF fl tab (wL L).val (2 * t1.val + 1) (2 * k.val + 1)) (offF fl (wL L).val (2 * t1.val + 1) (2 * k.val + 1)) 0 29 :=
        acc_step d L fl tab (wL L).val (2 * t1.val + 1) (2 * k.val + 1) 1 _ hRB ⟨28, by decide⟩ ⟨0, by decide⟩ _ rfl _ hw_v2099_4 _ (k1_off105_form ..) _ hc16
      have s_B0_29 : addf (AccMath.accVec (rowF fl tab (wL L).val (2 * t1.val + 1) (2 * k.val + 1)) (offF fl (wL L).val (2 * t1.val + 1) (2 * k.val + 1)) 0 29) (shapeCast S16 (pair1_next.sl.v2141_4 d L tab t1 k r g1 g2 hR hin h10) hc16) = AccMath.accVec (rowF fl tab (wL L).val (2 * t1.val + 1) (2 * k.val + 1)) (offF fl (wL L).val (2 * t1.val + 1) (2 * k.val + 1)) 0 30 :=
        acc_step d L fl tab (wL L).val (2 * t1.val + 1) (2 * k.val + 1) 1 _ hRB ⟨29, by decide⟩ ⟨0, by decide⟩ _ rfl _ hw_v2135_4 _ (k1_off106_form ..) _ hc16
      have s_B0_30 : addf (AccMath.accVec (rowF fl tab (wL L).val (2 * t1.val + 1) (2 * k.val + 1)) (offF fl (wL L).val (2 * t1.val + 1) (2 * k.val + 1)) 0 30) (shapeCast S16 (pair1_next.sl.v2177_4 d L tab t1 k r g1 g2 hR hin h10) hc16) = AccMath.accVec (rowF fl tab (wL L).val (2 * t1.val + 1) (2 * k.val + 1)) (offF fl (wL L).val (2 * t1.val + 1) (2 * k.val + 1)) 0 31 :=
        acc_step d L fl tab (wL L).val (2 * t1.val + 1) (2 * k.val + 1) 1 _ hRB ⟨30, by decide⟩ ⟨0, by decide⟩ _ rfl _ hw_v2171_4 _ (k1_off107_form ..) _ hc16
      have s_B0_31 : addf (AccMath.accVec (rowF fl tab (wL L).val (2 * t1.val + 1) (2 * k.val + 1)) (offF fl (wL L).val (2 * t1.val + 1) (2 * k.val + 1)) 0 31) (shapeCast S16 (pair1_next.sl.v2213_4 d L tab t1 k r g1 g2 hR hin h10) hc16) = AccMath.accVec (rowF fl tab (wL L).val (2 * t1.val + 1) (2 * k.val + 1)) (offF fl (wL L).val (2 * t1.val + 1) (2 * k.val + 1)) 0 32 :=
        acc_step d L fl tab (wL L).val (2 * t1.val + 1) (2 * k.val + 1) 1 _ hRB ⟨31, by decide⟩ ⟨0, by decide⟩ _ rfl _ hw_v2207_4 _ (k1_off108_form ..) _ hc16
      have s_B0_32 : addf (AccMath.accVec (rowF fl tab (wL L).val (2 * t1.val + 1) (2 * k.val + 1)) (offF fl (wL L).val (2 * t1.val + 1) (2 * k.val + 1)) 0 32) (shapeCast S16 (pair1_next.sl.v1673_5 d L tab t1 k r g1 g2 hR hin h10) hc16) = AccMath.accVec (rowF fl tab (wL L).val (2 * t1.val + 1) (2 * k.val + 1)) (offF fl (wL L).val (2 * t1.val + 1) (2 * k.val + 1)) 0 33 :=
        acc_step d L fl tab (wL L).val (2 * t1.val + 1) (2 * k.val + 1) 1 _ hRB ⟨32, by decide⟩ ⟨0, by decide⟩ _ rfl _ hw_v1667_5 _ (k1_off93_form ..) _ hc16
      have s_B0_33 : addf (AccMath.accVec (rowF fl tab (wL L).val (2 * t1.val + 1) (2 * k.val + 1)) (offF fl (wL L).val (2 * t1.val + 1) (2 * k.val + 1)) 0 33) (shapeCast S16 (pair1_next.sl.v1709_5 d L tab t1 k r g1 g2 hR hin h10) hc16) = AccMath.accVec (rowF fl tab (wL L).val (2 * t1.val + 1) (2 * k.val + 1)) (offF fl (wL L).val (2 * t1.val + 1) (2 * k.val + 1)) 0 34 :=
        acc_step d L fl tab (wL L).val (2 * t1.val + 1) (2 * k.val + 1) 1 _ hRB ⟨33, by decide⟩ ⟨0, by decide⟩ _ rfl _ hw_v1703_5 _ (k1_off94_form ..) _ hc16
      have s_B0_34 : addf (AccMath.accVec (rowF fl tab (wL L).val (2 * t1.val + 1) (2 * k.val + 1)) (offF fl (wL L).val (2 * t1.val + 1) (2 * k.val + 1)) 0 34) (shapeCast S16 (pair1_next.sl.v1745_5 d L tab t1 k r g1 g2 hR hin h10) hc16) = AccMath.accVec (rowF fl tab (wL L).val (2 * t1.val + 1) (2 * k.val + 1)) (offF fl (wL L).val (2 * t1.val + 1) (2 * k.val + 1)) 0 35 :=
        acc_step d L fl tab (wL L).val (2 * t1.val + 1) (2 * k.val + 1) 1 _ hRB ⟨34, by decide⟩ ⟨0, by decide⟩ _ rfl _ hw_v1739_5 _ (k1_off95_form ..) _ hc16
      have s_B0_35 : addf (AccMath.accVec (rowF fl tab (wL L).val (2 * t1.val + 1) (2 * k.val + 1)) (offF fl (wL L).val (2 * t1.val + 1) (2 * k.val + 1)) 0 35) (shapeCast S16 (pair1_next.sl.v1781_5 d L tab t1 k r g1 g2 hR hin h10) hc16) = AccMath.accVec (rowF fl tab (wL L).val (2 * t1.val + 1) (2 * k.val + 1)) (offF fl (wL L).val (2 * t1.val + 1) (2 * k.val + 1)) 0 36 :=
        acc_step d L fl tab (wL L).val (2 * t1.val + 1) (2 * k.val + 1) 1 _ hRB ⟨35, by decide⟩ ⟨0, by decide⟩ _ rfl _ hw_v1775_5 _ (k1_off96_form ..) _ hc16
      have s_B0_36 : addf (AccMath.accVec (rowF fl tab (wL L).val (2 * t1.val + 1) (2 * k.val + 1)) (offF fl (wL L).val (2 * t1.val + 1) (2 * k.val + 1)) 0 36) (shapeCast S16 (pair1_next.sl.v1817_5 d L tab t1 k r g1 g2 hR hin h10) hc16) = AccMath.accVec (rowF fl tab (wL L).val (2 * t1.val + 1) (2 * k.val + 1)) (offF fl (wL L).val (2 * t1.val + 1) (2 * k.val + 1)) 0 37 :=
        acc_step d L fl tab (wL L).val (2 * t1.val + 1) (2 * k.val + 1) 1 _ hRB ⟨36, by decide⟩ ⟨0, by decide⟩ _ rfl _ hw_v1811_5 _ (k1_off97_form ..) _ hc16
      have s_B0_37 : addf (AccMath.accVec (rowF fl tab (wL L).val (2 * t1.val + 1) (2 * k.val + 1)) (offF fl (wL L).val (2 * t1.val + 1) (2 * k.val + 1)) 0 37) (shapeCast S16 (pair1_next.sl.v1853_5 d L tab t1 k r g1 g2 hR hin h10) hc16) = AccMath.accVec (rowF fl tab (wL L).val (2 * t1.val + 1) (2 * k.val + 1)) (offF fl (wL L).val (2 * t1.val + 1) (2 * k.val + 1)) 0 38 :=
        acc_step d L fl tab (wL L).val (2 * t1.val + 1) (2 * k.val + 1) 1 _ hRB ⟨37, by decide⟩ ⟨0, by decide⟩ _ rfl _ hw_v1847_5 _ (k1_off98_form ..) _ hc16
      have s_B0_38 : addf (AccMath.accVec (rowF fl tab (wL L).val (2 * t1.val + 1) (2 * k.val + 1)) (offF fl (wL L).val (2 * t1.val + 1) (2 * k.val + 1)) 0 38) (shapeCast S16 (pair1_next.sl.v1889_5 d L tab t1 k r g1 g2 hR hin h10) hc16) = AccMath.accVec (rowF fl tab (wL L).val (2 * t1.val + 1) (2 * k.val + 1)) (offF fl (wL L).val (2 * t1.val + 1) (2 * k.val + 1)) 0 39 :=
        acc_step d L fl tab (wL L).val (2 * t1.val + 1) (2 * k.val + 1) 1 _ hRB ⟨38, by decide⟩ ⟨0, by decide⟩ _ rfl _ hw_v1883_5 _ (k1_off99_form ..) _ hc16
      have s_B0_39 : addf (AccMath.accVec (rowF fl tab (wL L).val (2 * t1.val + 1) (2 * k.val + 1)) (offF fl (wL L).val (2 * t1.val + 1) (2 * k.val + 1)) 0 39) (shapeCast S16 (pair1_next.sl.v1925_5 d L tab t1 k r g1 g2 hR hin h10) hc16) = AccMath.accVec (rowF fl tab (wL L).val (2 * t1.val + 1) (2 * k.val + 1)) (offF fl (wL L).val (2 * t1.val + 1) (2 * k.val + 1)) 0 40 :=
        acc_step d L fl tab (wL L).val (2 * t1.val + 1) (2 * k.val + 1) 1 _ hRB ⟨39, by decide⟩ ⟨0, by decide⟩ _ rfl _ hw_v1919_5 _ (k1_off100_form ..) _ hc16
      have s_B0_40 : addf (AccMath.accVec (rowF fl tab (wL L).val (2 * t1.val + 1) (2 * k.val + 1)) (offF fl (wL L).val (2 * t1.val + 1) (2 * k.val + 1)) 0 40) (shapeCast S16 (pair1_next.sl.v1961_5 d L tab t1 k r g1 g2 hR hin h10) hc16) = AccMath.accVec (rowF fl tab (wL L).val (2 * t1.val + 1) (2 * k.val + 1)) (offF fl (wL L).val (2 * t1.val + 1) (2 * k.val + 1)) 0 41 :=
        acc_step d L fl tab (wL L).val (2 * t1.val + 1) (2 * k.val + 1) 1 _ hRB ⟨40, by decide⟩ ⟨0, by decide⟩ _ rfl _ hw_v1955_5 _ (k1_off101_form ..) _ hc16
      have s_B0_41 : addf (AccMath.accVec (rowF fl tab (wL L).val (2 * t1.val + 1) (2 * k.val + 1)) (offF fl (wL L).val (2 * t1.val + 1) (2 * k.val + 1)) 0 41) (shapeCast S16 (pair1_next.sl.v1997_5 d L tab t1 k r g1 g2 hR hin h10) hc16) = AccMath.accVec (rowF fl tab (wL L).val (2 * t1.val + 1) (2 * k.val + 1)) (offF fl (wL L).val (2 * t1.val + 1) (2 * k.val + 1)) 0 42 :=
        acc_step d L fl tab (wL L).val (2 * t1.val + 1) (2 * k.val + 1) 1 _ hRB ⟨41, by decide⟩ ⟨0, by decide⟩ _ rfl _ hw_v1991_5 _ (k1_off102_form ..) _ hc16
      have s_B0_42 : addf (AccMath.accVec (rowF fl tab (wL L).val (2 * t1.val + 1) (2 * k.val + 1)) (offF fl (wL L).val (2 * t1.val + 1) (2 * k.val + 1)) 0 42) (shapeCast S16 (pair1_next.sl.v2033_5 d L tab t1 k r g1 g2 hR hin h10) hc16) = AccMath.accVec (rowF fl tab (wL L).val (2 * t1.val + 1) (2 * k.val + 1)) (offF fl (wL L).val (2 * t1.val + 1) (2 * k.val + 1)) 0 43 :=
        acc_step d L fl tab (wL L).val (2 * t1.val + 1) (2 * k.val + 1) 1 _ hRB ⟨42, by decide⟩ ⟨0, by decide⟩ _ rfl _ hw_v2027_5 _ (k1_off103_form ..) _ hc16
      have s_B0_43 : addf (AccMath.accVec (rowF fl tab (wL L).val (2 * t1.val + 1) (2 * k.val + 1)) (offF fl (wL L).val (2 * t1.val + 1) (2 * k.val + 1)) 0 43) (shapeCast S16 (pair1_next.sl.v2069_5 d L tab t1 k r g1 g2 hR hin h10) hc16) = AccMath.accVec (rowF fl tab (wL L).val (2 * t1.val + 1) (2 * k.val + 1)) (offF fl (wL L).val (2 * t1.val + 1) (2 * k.val + 1)) 0 44 :=
        acc_step d L fl tab (wL L).val (2 * t1.val + 1) (2 * k.val + 1) 1 _ hRB ⟨43, by decide⟩ ⟨0, by decide⟩ _ rfl _ hw_v2063_5 _ (k1_off104_form ..) _ hc16
      have s_B0_44 : addf (AccMath.accVec (rowF fl tab (wL L).val (2 * t1.val + 1) (2 * k.val + 1)) (offF fl (wL L).val (2 * t1.val + 1) (2 * k.val + 1)) 0 44) (shapeCast S16 (pair1_next.sl.v2105_5 d L tab t1 k r g1 g2 hR hin h10) hc16) = AccMath.accVec (rowF fl tab (wL L).val (2 * t1.val + 1) (2 * k.val + 1)) (offF fl (wL L).val (2 * t1.val + 1) (2 * k.val + 1)) 0 45 :=
        acc_step d L fl tab (wL L).val (2 * t1.val + 1) (2 * k.val + 1) 1 _ hRB ⟨44, by decide⟩ ⟨0, by decide⟩ _ rfl _ hw_v2099_5 _ (k1_off105_form ..) _ hc16
      have s_B0_45 : addf (AccMath.accVec (rowF fl tab (wL L).val (2 * t1.val + 1) (2 * k.val + 1)) (offF fl (wL L).val (2 * t1.val + 1) (2 * k.val + 1)) 0 45) (shapeCast S16 (pair1_next.sl.v2141_5 d L tab t1 k r g1 g2 hR hin h10) hc16) = AccMath.accVec (rowF fl tab (wL L).val (2 * t1.val + 1) (2 * k.val + 1)) (offF fl (wL L).val (2 * t1.val + 1) (2 * k.val + 1)) 0 46 :=
        acc_step d L fl tab (wL L).val (2 * t1.val + 1) (2 * k.val + 1) 1 _ hRB ⟨45, by decide⟩ ⟨0, by decide⟩ _ rfl _ hw_v2135_5 _ (k1_off106_form ..) _ hc16
      have s_B0_46 : addf (AccMath.accVec (rowF fl tab (wL L).val (2 * t1.val + 1) (2 * k.val + 1)) (offF fl (wL L).val (2 * t1.val + 1) (2 * k.val + 1)) 0 46) (shapeCast S16 (pair1_next.sl.v2177_5 d L tab t1 k r g1 g2 hR hin h10) hc16) = AccMath.accVec (rowF fl tab (wL L).val (2 * t1.val + 1) (2 * k.val + 1)) (offF fl (wL L).val (2 * t1.val + 1) (2 * k.val + 1)) 0 47 :=
        acc_step d L fl tab (wL L).val (2 * t1.val + 1) (2 * k.val + 1) 1 _ hRB ⟨46, by decide⟩ ⟨0, by decide⟩ _ rfl _ hw_v2171_5 _ (k1_off107_form ..) _ hc16
      have s_B0_47 : addf (AccMath.accVec (rowF fl tab (wL L).val (2 * t1.val + 1) (2 * k.val + 1)) (offF fl (wL L).val (2 * t1.val + 1) (2 * k.val + 1)) 0 47) (shapeCast S16 (pair1_next.sl.v2213_5 d L tab t1 k r g1 g2 hR hin h10) hc16) = AccMath.accVec (rowF fl tab (wL L).val (2 * t1.val + 1) (2 * k.val + 1)) (offF fl (wL L).val (2 * t1.val + 1) (2 * k.val + 1)) 0 48 :=
        acc_step d L fl tab (wL L).val (2 * t1.val + 1) (2 * k.val + 1) 1 _ hRB ⟨47, by decide⟩ ⟨0, by decide⟩ _ rfl _ hw_v2207_5 _ (k1_off108_form ..) _ hc16
      have s_B0_48 : addf (AccMath.accVec (rowF fl tab (wL L).val (2 * t1.val + 1) (2 * k.val + 1)) (offF fl (wL L).val (2 * t1.val + 1) (2 * k.val + 1)) 0 48) (shapeCast S16 (pair1_next.sl.v1578 d L tab t1 k r g1 g2 hR hin h10) hc16) = AccMath.accVec (rowF fl tab (wL L).val (2 * t1.val + 1) (2 * k.val + 1)) (offF fl (wL L).val (2 * t1.val + 1) (2 * k.val + 1)) 0 49 :=
        acc_step d L fl tab (wL L).val (2 * t1.val + 1) (2 * k.val + 1) 1 _ hRB ⟨48, by decide⟩ ⟨0, by decide⟩ _ rfl _ hw_v1572 _ (k1_off110_form ..) _ hc16
      have s_B0_49 : addf (AccMath.accVec (rowF fl tab (wL L).val (2 * t1.val + 1) (2 * k.val + 1)) (offF fl (wL L).val (2 * t1.val + 1) (2 * k.val + 1)) 0 49) (shapeCast S16 (pair1_next.sl.v1612 d L tab t1 k r g1 g2 hR hin h10) hc16) = AccMath.accVec (rowF fl tab (wL L).val (2 * t1.val + 1) (2 * k.val + 1)) (offF fl (wL L).val (2 * t1.val + 1) (2 * k.val + 1)) 0 50 :=
        acc_step d L fl tab (wL L).val (2 * t1.val + 1) (2 * k.val + 1) 1 _ hRB ⟨49, by decide⟩ ⟨0, by decide⟩ _ rfl _ hw_v1606 _ (k1_off111_form ..) _ hc16
      have hP_B0 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val + 1)) (offF fl (wL L).val (2 * t1.val + 1) (2 * k.val + 1)) 0 0) (shapeCast S16 (pair1_next.sl.v1673_3 d L tab t1 k r g1 g2 hR hin h10) hc16)) (shapeCast S16 (pair1_next.sl.v1709_3 d L tab t1 k r g1 g2 hR hin h10) hc16)) (shapeCast S16 (pair1_next.sl.v1745_3 d L tab t1 k r g1 g2 hR hin h10) hc16)) (shapeCast S16 (pair1_next.sl.v1781_3 d L tab t1 k r g1 g2 hR hin h10) hc16)) (shapeCast S16 (pair1_next.sl.v1817_3 d L tab t1 k r g1 g2 hR hin h10) hc16)) (shapeCast S16 (pair1_next.sl.v1853_3 d L tab t1 k r g1 g2 hR hin h10) hc16)) (shapeCast S16 (pair1_next.sl.v1889_3 d L tab t1 k r g1 g2 hR hin h10) hc16)) (shapeCast S16 (pair1_next.sl.v1925_3 d L tab t1 k r g1 g2 hR hin h10) hc16)) (shapeCast S16 (pair1_next.sl.v1961_3 d L tab t1 k r g1 g2 hR hin h10) hc16)) (shapeCast S16 (pair1_next.sl.v1997_3 d L tab t1 k r g1 g2 hR hin h10) hc16)) (shapeCast S16 (pair1_next.sl.v2033_3 d L tab t1 k r g1 g2 hR hin h10) hc16)) (shapeCast S16 (pair1_next.sl.v2069_3 d L tab t1 k r g1 g2 hR hin h10) hc16)) (shapeCast S16 (pair1_next.sl.v2105_3 d L tab t1 k r g1 g2 hR hin h10) hc16)) (shapeCast S16 (pair1_next.sl.v2141_3 d L tab t1 k r g1 g2 hR hin h10) hc16)) (shapeCast S16 (pair1_next.sl.v2177_3 d L tab t1 k r g1 g2 hR hin h10) hc16)) (shapeCast S16 (pair1_next.sl.v2213_3 d L tab t1 k r g1 g2 hR hin h10) hc16)) (shapeCast S16 (pair1_next.sl.v1673_4 d L tab t1 k r g1 g2 hR hin h10) hc16)) (shapeCast S16 (pair1_next.sl.v1709_4 d L tab t1 k r g1 g2 hR hin h10) hc16)) (shapeCast S16 (pair1_next.sl.v1745_4 d L tab t1 k r g1 g2 hR hin h10) hc16)) (shapeCast S16 (pair1_next.sl.v1781_4 d L tab t1 k r g1 g2 hR hin h10) hc16)) (shapeCast S16 (pair1_next.sl.v1817_4 d L tab t1 k r g1 g2 hR hin h10) hc16)) (shapeCast S16 (pair1_next.sl.v1853_4 d L tab t1 k r g1 g2 hR hin h10) hc16)) (shapeCast S16 (pair1_next.sl.v1889_4 d L tab t1 k r g1 g2 hR hin h10) hc16)) (shapeCast S16 (pair1_next.sl.v1925_4 d L tab t1 k r g1 g2 hR hin h10) hc16)) (shapeCast S16 (pair1_next.sl.v1961_4 d L tab t1 k r g1 g2 hR hin h10) hc16)) (shapeCast S16 (pair1_next.sl.v1997_4 d L tab t1 k r g1 g2 hR hin h10) hc16)) (shapeCast S16 (pair1_next.sl.v2033_4 d L tab t1 k r g1 g2 hR hin h10) hc16)) (shapeCast S16 (pair1_next.sl.v2069_4 d L tab t1 k r g1 g2 hR hin h10) hc16)) (shapeCast S16 (pair1_next.sl.v2105_4 d L tab t1 k r g1 g2 hR hin h10) hc16)) (shapeCast S16 (pair1_next.sl.v2141_4 d L tab t1 k r g1 g2 hR hin h10) hc16)) (shapeCast S16 (pair1_next.sl.v2177_4 d L tab t1 k r g1 g2 hR hin h10) hc16)) (shapeCast S16 (pair1_next.sl.v2213_4 d L tab t1 k r g1 g2 hR hin h10) hc16)) (shapeCast S16 (pair1_next.sl.v1673_5 d L tab t1 k r g1 g2 hR hin h10) hc16)) (shapeCast S16 (pair1_next.sl.v1709_5 d L tab t1 k r g1 g2 hR hin h10) hc16)) (shapeCast S16 (pair1_next.sl.v1745_5 d L tab t1 k r g1 g2 hR hin h10) hc16)) (shapeCast S16 (pair1_next.sl.v1781_5 d L tab t1 k r g1 g2 hR hin h10) hc16)) (shapeCast S16 (pair1_next.sl.v1817_5 d L tab t1 k r g1 g2 hR hin h10) hc16)) (shapeCast S16 (pair1_next.sl.v1853_5 d L tab t1 k r g1 g2 hR hin h10) hc16)) (shapeCast S16 (pair1_next.sl.v1889_5 d L tab t1 k r g1 g2 hR hin h10) hc16)) (shapeCast S16 (pair1_next.sl.v1925_5 d L tab t1 k r g1 g2 hR hin h10) hc16)) (shapeCast S16 (pair1_next.sl.v1961_5 d L tab t1 k r g1 g2 hR hin h10) hc16)) (shapeCast S16 (pair1_next.sl.v1997_5 d L tab t1 k r g1 g2 hR hin h10) hc16)) (shapeCast S16 (pair1_next.sl.v2033_5 d L tab t1 k r g1 g2 hR hin h10) hc16)) (shapeCast S16 (pair1_next.sl.v2069_5 d L tab t1 k r g1 g2 hR hin h10) hc16)) (shapeCast S16 (pair1_next.sl.v2105_5 d L tab t1 k r g1 g2 hR hin h10) hc16)) (shapeCast S16 (pair1_next.sl.v2141_5 d L tab t1 k r g1 g2 hR hin h10) hc16)) (shapeCast S16 (pair1_next.sl.v2177_5 d L tab t1 k r g1 g2 hR hin h10) hc16)) (shapeCast S16 (pair1_next.sl.v2213_5 d L tab t1 k r g1 g2 hR hin h10) hc16)) (shapeCast S16 (pair1_next.sl.v1578 d L tab t1 k r g1 g2 hR hin h10) hc16)) (shapeCast S16 (pair1_next.sl.v1612 d L tab t1 k r g1 g2 hR hin h10) hc16)) hc1 x = Spec.bagPartial fl tab (128 * (wL L).val + 16 * (2 * t1.val + 1) + (2 * k.val + 1)) (16 * 0 + (x 2).val) 50 := fun x => by
        rw [s_B0_0, s_B0_1, s_B0_2, s_B0_3, s_B0_4, s_B0_5, s_B0_6, s_B0_7, s_B0_8, s_B0_9, s_B0_10, s_B0_11, s_B0_12, s_B0_13, s_B0_14, s_B0_15, s_B0_16, s_B0_17, s_B0_18, s_B0_19, s_B0_20, s_B0_21, s_B0_22, s_B0_23, s_B0_24, s_B0_25, s_B0_26, s_B0_27, s_B0_28, s_B0_29, s_B0_30, s_B0_31, s_B0_32, s_B0_33, s_B0_34, s_B0_35, s_B0_36, s_B0_37, s_B0_38, s_B0_39, s_B0_40, s_B0_41, s_B0_42, s_B0_43, s_B0_44, s_B0_45, s_B0_46, s_B0_47, s_B0_48, s_B0_49]
        exact payload_ok fl tab (wL L).val (2 * t1.val + 1) (2 * k.val + 1) ⟨0, by decide⟩ hc1 x
      have s_B1_0 : addf (AccMath.accVec (rowF fl tab (wL L).val (2 * t1.val + 1) (2 * k.val + 1)) (offF fl (wL L).val (2 * t1.val + 1) (2 * k.val + 1)) 1 0) (shapeCast S16 (pair1_next.sl.v1681_3 d L tab t1 k r g1 g2 hR hin h10) hc16) = AccMath.accVec (rowF fl tab (wL L).val (2 * t1.val + 1) (2 * k.val + 1)) (offF fl (wL L).val (2 * t1.val + 1) (2 * k.val + 1)) 1 1 :=
        acc_step d L fl tab (wL L).val (2 * t1.val + 1) (2 * k.val + 1) 1 _ hRB ⟨0, by decide⟩ ⟨1, by decide⟩ _ rfl _ hw_v1667_3 _ (k1_off93_form ..) _ hc16
      have s_B1_1 : addf (AccMath.accVec (rowF fl tab (wL L).val (2 * t1.val + 1) (2 * k.val + 1)) (offF fl (wL L).val (2 * t1.val + 1) (2 * k.val + 1)) 1 1) (shapeCast S16 (pair1_next.sl.v1717_3 d L tab t1 k r g1 g2 hR hin h10) hc16) = AccMath.accVec (rowF fl tab (wL L).val (2 * t1.val + 1) (2 * k.val + 1)) (offF fl (wL L).val (2 * t1.val + 1) (2 * k.val + 1)) 1 2 :=
        acc_step d L fl tab (wL L).val (2 * t1.val + 1) (2 * k.val + 1) 1 _ hRB ⟨1, by decide⟩ ⟨1, by decide⟩ _ rfl _ hw_v1703_3 _ (k1_off94_form ..) _ hc16
      have s_B1_2 : addf (AccMath.accVec (rowF fl tab (wL L).val (2 * t1.val + 1) (2 * k.val + 1)) (offF fl (wL L).val (2 * t1.val + 1) (2 * k.val + 1)) 1 2) (shapeCast S16 (pair1_next.sl.v1753_3 d L tab t1 k r g1 g2 hR hin h10) hc16) = AccMath.accVec (rowF fl tab (wL L).val (2 * t1.val + 1) (2 * k.val + 1)) (offF fl (wL L).val (2 * t1.val + 1) (2 * k.val + 1)) 1 3 :=
        acc_step d L fl tab (wL L).val (2 * t1.val + 1) (2 * k.val + 1) 1 _ hRB ⟨2, by decide⟩ ⟨1, by decide⟩ _ rfl _ hw_v1739_3 _ (k1_off95_form ..) _ hc16
      have s_B1_3 : addf (AccMath.accVec (rowF fl tab (wL L).val (2 * t1.val + 1) (2 * k.val + 1)) (offF fl (wL L).val (2 * t1.val + 1) (2 * k.val + 1)) 1 3) (shapeCast S16 (pair1_next.sl.v1789_3 d L tab t1 k r g1 g2 hR hin h10) hc16) = AccMath.accVec (rowF fl tab (wL L).val (2 * t1.val + 1) (2 * k.val + 1)) (offF fl (wL L).val (2 * t1.val + 1) (2 * k.val + 1)) 1 4 :=
        acc_step d L fl tab (wL L).val (2 * t1.val + 1) (2 * k.val + 1) 1 _ hRB ⟨3, by decide⟩ ⟨1, by decide⟩ _ rfl _ hw_v1775_3 _ (k1_off96_form ..) _ hc16
      have s_B1_4 : addf (AccMath.accVec (rowF fl tab (wL L).val (2 * t1.val + 1) (2 * k.val + 1)) (offF fl (wL L).val (2 * t1.val + 1) (2 * k.val + 1)) 1 4) (shapeCast S16 (pair1_next.sl.v1825_3 d L tab t1 k r g1 g2 hR hin h10) hc16) = AccMath.accVec (rowF fl tab (wL L).val (2 * t1.val + 1) (2 * k.val + 1)) (offF fl (wL L).val (2 * t1.val + 1) (2 * k.val + 1)) 1 5 :=
        acc_step d L fl tab (wL L).val (2 * t1.val + 1) (2 * k.val + 1) 1 _ hRB ⟨4, by decide⟩ ⟨1, by decide⟩ _ rfl _ hw_v1811_3 _ (k1_off97_form ..) _ hc16
      have s_B1_5 : addf (AccMath.accVec (rowF fl tab (wL L).val (2 * t1.val + 1) (2 * k.val + 1)) (offF fl (wL L).val (2 * t1.val + 1) (2 * k.val + 1)) 1 5) (shapeCast S16 (pair1_next.sl.v1861_3 d L tab t1 k r g1 g2 hR hin h10) hc16) = AccMath.accVec (rowF fl tab (wL L).val (2 * t1.val + 1) (2 * k.val + 1)) (offF fl (wL L).val (2 * t1.val + 1) (2 * k.val + 1)) 1 6 :=
        acc_step d L fl tab (wL L).val (2 * t1.val + 1) (2 * k.val + 1) 1 _ hRB ⟨5, by decide⟩ ⟨1, by decide⟩ _ rfl _ hw_v1847_3 _ (k1_off98_form ..) _ hc16
      have s_B1_6 : addf (AccMath.accVec (rowF fl tab (wL L).val (2 * t1.val + 1) (2 * k.val + 1)) (offF fl (wL L).val (2 * t1.val + 1) (2 * k.val + 1)) 1 6) (shapeCast S16 (pair1_next.sl.v1897_3 d L tab t1 k r g1 g2 hR hin h10) hc16) = AccMath.accVec (rowF fl tab (wL L).val (2 * t1.val + 1) (2 * k.val + 1)) (offF fl (wL L).val (2 * t1.val + 1) (2 * k.val + 1)) 1 7 :=
        acc_step d L fl tab (wL L).val (2 * t1.val + 1) (2 * k.val + 1) 1 _ hRB ⟨6, by decide⟩ ⟨1, by decide⟩ _ rfl _ hw_v1883_3 _ (k1_off99_form ..) _ hc16
      have s_B1_7 : addf (AccMath.accVec (rowF fl tab (wL L).val (2 * t1.val + 1) (2 * k.val + 1)) (offF fl (wL L).val (2 * t1.val + 1) (2 * k.val + 1)) 1 7) (shapeCast S16 (pair1_next.sl.v1933_3 d L tab t1 k r g1 g2 hR hin h10) hc16) = AccMath.accVec (rowF fl tab (wL L).val (2 * t1.val + 1) (2 * k.val + 1)) (offF fl (wL L).val (2 * t1.val + 1) (2 * k.val + 1)) 1 8 :=
        acc_step d L fl tab (wL L).val (2 * t1.val + 1) (2 * k.val + 1) 1 _ hRB ⟨7, by decide⟩ ⟨1, by decide⟩ _ rfl _ hw_v1919_3 _ (k1_off100_form ..) _ hc16
      have s_B1_8 : addf (AccMath.accVec (rowF fl tab (wL L).val (2 * t1.val + 1) (2 * k.val + 1)) (offF fl (wL L).val (2 * t1.val + 1) (2 * k.val + 1)) 1 8) (shapeCast S16 (pair1_next.sl.v1969_3 d L tab t1 k r g1 g2 hR hin h10) hc16) = AccMath.accVec (rowF fl tab (wL L).val (2 * t1.val + 1) (2 * k.val + 1)) (offF fl (wL L).val (2 * t1.val + 1) (2 * k.val + 1)) 1 9 :=
        acc_step d L fl tab (wL L).val (2 * t1.val + 1) (2 * k.val + 1) 1 _ hRB ⟨8, by decide⟩ ⟨1, by decide⟩ _ rfl _ hw_v1955_3 _ (k1_off101_form ..) _ hc16
      have s_B1_9 : addf (AccMath.accVec (rowF fl tab (wL L).val (2 * t1.val + 1) (2 * k.val + 1)) (offF fl (wL L).val (2 * t1.val + 1) (2 * k.val + 1)) 1 9) (shapeCast S16 (pair1_next.sl.v2005_3 d L tab t1 k r g1 g2 hR hin h10) hc16) = AccMath.accVec (rowF fl tab (wL L).val (2 * t1.val + 1) (2 * k.val + 1)) (offF fl (wL L).val (2 * t1.val + 1) (2 * k.val + 1)) 1 10 :=
        acc_step d L fl tab (wL L).val (2 * t1.val + 1) (2 * k.val + 1) 1 _ hRB ⟨9, by decide⟩ ⟨1, by decide⟩ _ rfl _ hw_v1991_3 _ (k1_off102_form ..) _ hc16
      have s_B1_10 : addf (AccMath.accVec (rowF fl tab (wL L).val (2 * t1.val + 1) (2 * k.val + 1)) (offF fl (wL L).val (2 * t1.val + 1) (2 * k.val + 1)) 1 10) (shapeCast S16 (pair1_next.sl.v2041_3 d L tab t1 k r g1 g2 hR hin h10) hc16) = AccMath.accVec (rowF fl tab (wL L).val (2 * t1.val + 1) (2 * k.val + 1)) (offF fl (wL L).val (2 * t1.val + 1) (2 * k.val + 1)) 1 11 :=
        acc_step d L fl tab (wL L).val (2 * t1.val + 1) (2 * k.val + 1) 1 _ hRB ⟨10, by decide⟩ ⟨1, by decide⟩ _ rfl _ hw_v2027_3 _ (k1_off103_form ..) _ hc16
      have s_B1_11 : addf (AccMath.accVec (rowF fl tab (wL L).val (2 * t1.val + 1) (2 * k.val + 1)) (offF fl (wL L).val (2 * t1.val + 1) (2 * k.val + 1)) 1 11) (shapeCast S16 (pair1_next.sl.v2077_3 d L tab t1 k r g1 g2 hR hin h10) hc16) = AccMath.accVec (rowF fl tab (wL L).val (2 * t1.val + 1) (2 * k.val + 1)) (offF fl (wL L).val (2 * t1.val + 1) (2 * k.val + 1)) 1 12 :=
        acc_step d L fl tab (wL L).val (2 * t1.val + 1) (2 * k.val + 1) 1 _ hRB ⟨11, by decide⟩ ⟨1, by decide⟩ _ rfl _ hw_v2063_3 _ (k1_off104_form ..) _ hc16
      have s_B1_12 : addf (AccMath.accVec (rowF fl tab (wL L).val (2 * t1.val + 1) (2 * k.val + 1)) (offF fl (wL L).val (2 * t1.val + 1) (2 * k.val + 1)) 1 12) (shapeCast S16 (pair1_next.sl.v2113_3 d L tab t1 k r g1 g2 hR hin h10) hc16) = AccMath.accVec (rowF fl tab (wL L).val (2 * t1.val + 1) (2 * k.val + 1)) (offF fl (wL L).val (2 * t1.val + 1) (2 * k.val + 1)) 1 13 :=
        acc_step d L fl tab (wL L).val (2 * t1.val + 1) (2 * k.val + 1) 1 _ hRB ⟨12, by decide⟩ ⟨1, by decide⟩ _ rfl _ hw_v2099_3 _ (k1_off105_form ..) _ hc16
      have s_B1_13 : addf (AccMath.accVec (rowF fl tab (wL L).val (2 * t1.val + 1) (2 * k.val + 1)) (offF fl (wL L).val (2 * t1.val + 1) (2 * k.val + 1)) 1 13) (shapeCast S16 (pair1_next.sl.v2149_3 d L tab t1 k r g1 g2 hR hin h10) hc16) = AccMath.accVec (rowF fl tab (wL L).val (2 * t1.val + 1) (2 * k.val + 1)) (offF fl (wL L).val (2 * t1.val + 1) (2 * k.val + 1)) 1 14 :=
        acc_step d L fl tab (wL L).val (2 * t1.val + 1) (2 * k.val + 1) 1 _ hRB ⟨13, by decide⟩ ⟨1, by decide⟩ _ rfl _ hw_v2135_3 _ (k1_off106_form ..) _ hc16
      have s_B1_14 : addf (AccMath.accVec (rowF fl tab (wL L).val (2 * t1.val + 1) (2 * k.val + 1)) (offF fl (wL L).val (2 * t1.val + 1) (2 * k.val + 1)) 1 14) (shapeCast S16 (pair1_next.sl.v2185_3 d L tab t1 k r g1 g2 hR hin h10) hc16) = AccMath.accVec (rowF fl tab (wL L).val (2 * t1.val + 1) (2 * k.val + 1)) (offF fl (wL L).val (2 * t1.val + 1) (2 * k.val + 1)) 1 15 :=
        acc_step d L fl tab (wL L).val (2 * t1.val + 1) (2 * k.val + 1) 1 _ hRB ⟨14, by decide⟩ ⟨1, by decide⟩ _ rfl _ hw_v2171_3 _ (k1_off107_form ..) _ hc16
      have s_B1_15 : addf (AccMath.accVec (rowF fl tab (wL L).val (2 * t1.val + 1) (2 * k.val + 1)) (offF fl (wL L).val (2 * t1.val + 1) (2 * k.val + 1)) 1 15) (shapeCast S16 (pair1_next.sl.v2221_3 d L tab t1 k r g1 g2 hR hin h10) hc16) = AccMath.accVec (rowF fl tab (wL L).val (2 * t1.val + 1) (2 * k.val + 1)) (offF fl (wL L).val (2 * t1.val + 1) (2 * k.val + 1)) 1 16 :=
        acc_step d L fl tab (wL L).val (2 * t1.val + 1) (2 * k.val + 1) 1 _ hRB ⟨15, by decide⟩ ⟨1, by decide⟩ _ rfl _ hw_v2207_3 _ (k1_off108_form ..) _ hc16
      have s_B1_16 : addf (AccMath.accVec (rowF fl tab (wL L).val (2 * t1.val + 1) (2 * k.val + 1)) (offF fl (wL L).val (2 * t1.val + 1) (2 * k.val + 1)) 1 16) (shapeCast S16 (pair1_next.sl.v1681_4 d L tab t1 k r g1 g2 hR hin h10) hc16) = AccMath.accVec (rowF fl tab (wL L).val (2 * t1.val + 1) (2 * k.val + 1)) (offF fl (wL L).val (2 * t1.val + 1) (2 * k.val + 1)) 1 17 :=
        acc_step d L fl tab (wL L).val (2 * t1.val + 1) (2 * k.val + 1) 1 _ hRB ⟨16, by decide⟩ ⟨1, by decide⟩ _ rfl _ hw_v1667_4 _ (k1_off93_form ..) _ hc16
      have s_B1_17 : addf (AccMath.accVec (rowF fl tab (wL L).val (2 * t1.val + 1) (2 * k.val + 1)) (offF fl (wL L).val (2 * t1.val + 1) (2 * k.val + 1)) 1 17) (shapeCast S16 (pair1_next.sl.v1717_4 d L tab t1 k r g1 g2 hR hin h10) hc16) = AccMath.accVec (rowF fl tab (wL L).val (2 * t1.val + 1) (2 * k.val + 1)) (offF fl (wL L).val (2 * t1.val + 1) (2 * k.val + 1)) 1 18 :=
        acc_step d L fl tab (wL L).val (2 * t1.val + 1) (2 * k.val + 1) 1 _ hRB ⟨17, by decide⟩ ⟨1, by decide⟩ _ rfl _ hw_v1703_4 _ (k1_off94_form ..) _ hc16
      have s_B1_18 : addf (AccMath.accVec (rowF fl tab (wL L).val (2 * t1.val + 1) (2 * k.val + 1)) (offF fl (wL L).val (2 * t1.val + 1) (2 * k.val + 1)) 1 18) (shapeCast S16 (pair1_next.sl.v1753_4 d L tab t1 k r g1 g2 hR hin h10) hc16) = AccMath.accVec (rowF fl tab (wL L).val (2 * t1.val + 1) (2 * k.val + 1)) (offF fl (wL L).val (2 * t1.val + 1) (2 * k.val + 1)) 1 19 :=
        acc_step d L fl tab (wL L).val (2 * t1.val + 1) (2 * k.val + 1) 1 _ hRB ⟨18, by decide⟩ ⟨1, by decide⟩ _ rfl _ hw_v1739_4 _ (k1_off95_form ..) _ hc16
      have s_B1_19 : addf (AccMath.accVec (rowF fl tab (wL L).val (2 * t1.val + 1) (2 * k.val + 1)) (offF fl (wL L).val (2 * t1.val + 1) (2 * k.val + 1)) 1 19) (shapeCast S16 (pair1_next.sl.v1789_4 d L tab t1 k r g1 g2 hR hin h10) hc16) = AccMath.accVec (rowF fl tab (wL L).val (2 * t1.val + 1) (2 * k.val + 1)) (offF fl (wL L).val (2 * t1.val + 1) (2 * k.val + 1)) 1 20 :=
        acc_step d L fl tab (wL L).val (2 * t1.val + 1) (2 * k.val + 1) 1 _ hRB ⟨19, by decide⟩ ⟨1, by decide⟩ _ rfl _ hw_v1775_4 _ (k1_off96_form ..) _ hc16
      have s_B1_20 : addf (AccMath.accVec (rowF fl tab (wL L).val (2 * t1.val + 1) (2 * k.val + 1)) (offF fl (wL L).val (2 * t1.val + 1) (2 * k.val + 1)) 1 20) (shapeCast S16 (pair1_next.sl.v1825_4 d L tab t1 k r g1 g2 hR hin h10) hc16) = AccMath.accVec (rowF fl tab (wL L).val (2 * t1.val + 1) (2 * k.val + 1)) (offF fl (wL L).val (2 * t1.val + 1) (2 * k.val + 1)) 1 21 :=
        acc_step d L fl tab (wL L).val (2 * t1.val + 1) (2 * k.val + 1) 1 _ hRB ⟨20, by decide⟩ ⟨1, by decide⟩ _ rfl _ hw_v1811_4 _ (k1_off97_form ..) _ hc16
      have s_B1_21 : addf (AccMath.accVec (rowF fl tab (wL L).val (2 * t1.val + 1) (2 * k.val + 1)) (offF fl (wL L).val (2 * t1.val + 1) (2 * k.val + 1)) 1 21) (shapeCast S16 (pair1_next.sl.v1861_4 d L tab t1 k r g1 g2 hR hin h10) hc16) = AccMath.accVec (rowF fl tab (wL L).val (2 * t1.val + 1) (2 * k.val + 1)) (offF fl (wL L).val (2 * t1.val + 1) (2 * k.val + 1)) 1 22 :=
        acc_step d L fl tab (wL L).val (2 * t1.val + 1) (2 * k.val + 1) 1 _ hRB ⟨21, by decide⟩ ⟨1, by decide⟩ _ rfl _ hw_v1847_4 _ (k1_off98_form ..) _ hc16
      have s_B1_22 : addf (AccMath.accVec (rowF fl tab (wL L).val (2 * t1.val + 1) (2 * k.val + 1)) (offF fl (wL L).val (2 * t1.val + 1) (2 * k.val + 1)) 1 22) (shapeCast S16 (pair1_next.sl.v1897_4 d L tab t1 k r g1 g2 hR hin h10) hc16) = AccMath.accVec (rowF fl tab (wL L).val (2 * t1.val + 1) (2 * k.val + 1)) (offF fl (wL L).val (2 * t1.val + 1) (2 * k.val + 1)) 1 23 :=
        acc_step d L fl tab (wL L).val (2 * t1.val + 1) (2 * k.val + 1) 1 _ hRB ⟨22, by decide⟩ ⟨1, by decide⟩ _ rfl _ hw_v1883_4 _ (k1_off99_form ..) _ hc16
      have s_B1_23 : addf (AccMath.accVec (rowF fl tab (wL L).val (2 * t1.val + 1) (2 * k.val + 1)) (offF fl (wL L).val (2 * t1.val + 1) (2 * k.val + 1)) 1 23) (shapeCast S16 (pair1_next.sl.v1933_4 d L tab t1 k r g1 g2 hR hin h10) hc16) = AccMath.accVec (rowF fl tab (wL L).val (2 * t1.val + 1) (2 * k.val + 1)) (offF fl (wL L).val (2 * t1.val + 1) (2 * k.val + 1)) 1 24 :=
        acc_step d L fl tab (wL L).val (2 * t1.val + 1) (2 * k.val + 1) 1 _ hRB ⟨23, by decide⟩ ⟨1, by decide⟩ _ rfl _ hw_v1919_4 _ (k1_off100_form ..) _ hc16
      have s_B1_24 : addf (AccMath.accVec (rowF fl tab (wL L).val (2 * t1.val + 1) (2 * k.val + 1)) (offF fl (wL L).val (2 * t1.val + 1) (2 * k.val + 1)) 1 24) (shapeCast S16 (pair1_next.sl.v1969_4 d L tab t1 k r g1 g2 hR hin h10) hc16) = AccMath.accVec (rowF fl tab (wL L).val (2 * t1.val + 1) (2 * k.val + 1)) (offF fl (wL L).val (2 * t1.val + 1) (2 * k.val + 1)) 1 25 :=
        acc_step d L fl tab (wL L).val (2 * t1.val + 1) (2 * k.val + 1) 1 _ hRB ⟨24, by decide⟩ ⟨1, by decide⟩ _ rfl _ hw_v1955_4 _ (k1_off101_form ..) _ hc16
      have s_B1_25 : addf (AccMath.accVec (rowF fl tab (wL L).val (2 * t1.val + 1) (2 * k.val + 1)) (offF fl (wL L).val (2 * t1.val + 1) (2 * k.val + 1)) 1 25) (shapeCast S16 (pair1_next.sl.v2005_4 d L tab t1 k r g1 g2 hR hin h10) hc16) = AccMath.accVec (rowF fl tab (wL L).val (2 * t1.val + 1) (2 * k.val + 1)) (offF fl (wL L).val (2 * t1.val + 1) (2 * k.val + 1)) 1 26 :=
        acc_step d L fl tab (wL L).val (2 * t1.val + 1) (2 * k.val + 1) 1 _ hRB ⟨25, by decide⟩ ⟨1, by decide⟩ _ rfl _ hw_v1991_4 _ (k1_off102_form ..) _ hc16
      have s_B1_26 : addf (AccMath.accVec (rowF fl tab (wL L).val (2 * t1.val + 1) (2 * k.val + 1)) (offF fl (wL L).val (2 * t1.val + 1) (2 * k.val + 1)) 1 26) (shapeCast S16 (pair1_next.sl.v2041_4 d L tab t1 k r g1 g2 hR hin h10) hc16) = AccMath.accVec (rowF fl tab (wL L).val (2 * t1.val + 1) (2 * k.val + 1)) (offF fl (wL L).val (2 * t1.val + 1) (2 * k.val + 1)) 1 27 :=
        acc_step d L fl tab (wL L).val (2 * t1.val + 1) (2 * k.val + 1) 1 _ hRB ⟨26, by decide⟩ ⟨1, by decide⟩ _ rfl _ hw_v2027_4 _ (k1_off103_form ..) _ hc16
      have s_B1_27 : addf (AccMath.accVec (rowF fl tab (wL L).val (2 * t1.val + 1) (2 * k.val + 1)) (offF fl (wL L).val (2 * t1.val + 1) (2 * k.val + 1)) 1 27) (shapeCast S16 (pair1_next.sl.v2077_4 d L tab t1 k r g1 g2 hR hin h10) hc16) = AccMath.accVec (rowF fl tab (wL L).val (2 * t1.val + 1) (2 * k.val + 1)) (offF fl (wL L).val (2 * t1.val + 1) (2 * k.val + 1)) 1 28 :=
        acc_step d L fl tab (wL L).val (2 * t1.val + 1) (2 * k.val + 1) 1 _ hRB ⟨27, by decide⟩ ⟨1, by decide⟩ _ rfl _ hw_v2063_4 _ (k1_off104_form ..) _ hc16
      have s_B1_28 : addf (AccMath.accVec (rowF fl tab (wL L).val (2 * t1.val + 1) (2 * k.val + 1)) (offF fl (wL L).val (2 * t1.val + 1) (2 * k.val + 1)) 1 28) (shapeCast S16 (pair1_next.sl.v2113_4 d L tab t1 k r g1 g2 hR hin h10) hc16) = AccMath.accVec (rowF fl tab (wL L).val (2 * t1.val + 1) (2 * k.val + 1)) (offF fl (wL L).val (2 * t1.val + 1) (2 * k.val + 1)) 1 29 :=
        acc_step d L fl tab (wL L).val (2 * t1.val + 1) (2 * k.val + 1) 1 _ hRB ⟨28, by decide⟩ ⟨1, by decide⟩ _ rfl _ hw_v2099_4 _ (k1_off105_form ..) _ hc16
      have s_B1_29 : addf (AccMath.accVec (rowF fl tab (wL L).val (2 * t1.val + 1) (2 * k.val + 1)) (offF fl (wL L).val (2 * t1.val + 1) (2 * k.val + 1)) 1 29) (shapeCast S16 (pair1_next.sl.v2149_4 d L tab t1 k r g1 g2 hR hin h10) hc16) = AccMath.accVec (rowF fl tab (wL L).val (2 * t1.val + 1) (2 * k.val + 1)) (offF fl (wL L).val (2 * t1.val + 1) (2 * k.val + 1)) 1 30 :=
        acc_step d L fl tab (wL L).val (2 * t1.val + 1) (2 * k.val + 1) 1 _ hRB ⟨29, by decide⟩ ⟨1, by decide⟩ _ rfl _ hw_v2135_4 _ (k1_off106_form ..) _ hc16
      have s_B1_30 : addf (AccMath.accVec (rowF fl tab (wL L).val (2 * t1.val + 1) (2 * k.val + 1)) (offF fl (wL L).val (2 * t1.val + 1) (2 * k.val + 1)) 1 30) (shapeCast S16 (pair1_next.sl.v2185_4 d L tab t1 k r g1 g2 hR hin h10) hc16) = AccMath.accVec (rowF fl tab (wL L).val (2 * t1.val + 1) (2 * k.val + 1)) (offF fl (wL L).val (2 * t1.val + 1) (2 * k.val + 1)) 1 31 :=
        acc_step d L fl tab (wL L).val (2 * t1.val + 1) (2 * k.val + 1) 1 _ hRB ⟨30, by decide⟩ ⟨1, by decide⟩ _ rfl _ hw_v2171_4 _ (k1_off107_form ..) _ hc16
      have s_B1_31 : addf (AccMath.accVec (rowF fl tab (wL L).val (2 * t1.val + 1) (2 * k.val + 1)) (offF fl (wL L).val (2 * t1.val + 1) (2 * k.val + 1)) 1 31) (shapeCast S16 (pair1_next.sl.v2221_4 d L tab t1 k r g1 g2 hR hin h10) hc16) = AccMath.accVec (rowF fl tab (wL L).val (2 * t1.val + 1) (2 * k.val + 1)) (offF fl (wL L).val (2 * t1.val + 1) (2 * k.val + 1)) 1 32 :=
        acc_step d L fl tab (wL L).val (2 * t1.val + 1) (2 * k.val + 1) 1 _ hRB ⟨31, by decide⟩ ⟨1, by decide⟩ _ rfl _ hw_v2207_4 _ (k1_off108_form ..) _ hc16
      have s_B1_32 : addf (AccMath.accVec (rowF fl tab (wL L).val (2 * t1.val + 1) (2 * k.val + 1)) (offF fl (wL L).val (2 * t1.val + 1) (2 * k.val + 1)) 1 32) (shapeCast S16 (pair1_next.sl.v1681_5 d L tab t1 k r g1 g2 hR hin h10) hc16) = AccMath.accVec (rowF fl tab (wL L).val (2 * t1.val + 1) (2 * k.val + 1)) (offF fl (wL L).val (2 * t1.val + 1) (2 * k.val + 1)) 1 33 :=
        acc_step d L fl tab (wL L).val (2 * t1.val + 1) (2 * k.val + 1) 1 _ hRB ⟨32, by decide⟩ ⟨1, by decide⟩ _ rfl _ hw_v1667_5 _ (k1_off93_form ..) _ hc16
      have s_B1_33 : addf (AccMath.accVec (rowF fl tab (wL L).val (2 * t1.val + 1) (2 * k.val + 1)) (offF fl (wL L).val (2 * t1.val + 1) (2 * k.val + 1)) 1 33) (shapeCast S16 (pair1_next.sl.v1717_5 d L tab t1 k r g1 g2 hR hin h10) hc16) = AccMath.accVec (rowF fl tab (wL L).val (2 * t1.val + 1) (2 * k.val + 1)) (offF fl (wL L).val (2 * t1.val + 1) (2 * k.val + 1)) 1 34 :=
        acc_step d L fl tab (wL L).val (2 * t1.val + 1) (2 * k.val + 1) 1 _ hRB ⟨33, by decide⟩ ⟨1, by decide⟩ _ rfl _ hw_v1703_5 _ (k1_off94_form ..) _ hc16
      have s_B1_34 : addf (AccMath.accVec (rowF fl tab (wL L).val (2 * t1.val + 1) (2 * k.val + 1)) (offF fl (wL L).val (2 * t1.val + 1) (2 * k.val + 1)) 1 34) (shapeCast S16 (pair1_next.sl.v1753_5 d L tab t1 k r g1 g2 hR hin h10) hc16) = AccMath.accVec (rowF fl tab (wL L).val (2 * t1.val + 1) (2 * k.val + 1)) (offF fl (wL L).val (2 * t1.val + 1) (2 * k.val + 1)) 1 35 :=
        acc_step d L fl tab (wL L).val (2 * t1.val + 1) (2 * k.val + 1) 1 _ hRB ⟨34, by decide⟩ ⟨1, by decide⟩ _ rfl _ hw_v1739_5 _ (k1_off95_form ..) _ hc16
      have s_B1_35 : addf (AccMath.accVec (rowF fl tab (wL L).val (2 * t1.val + 1) (2 * k.val + 1)) (offF fl (wL L).val (2 * t1.val + 1) (2 * k.val + 1)) 1 35) (shapeCast S16 (pair1_next.sl.v1789_5 d L tab t1 k r g1 g2 hR hin h10) hc16) = AccMath.accVec (rowF fl tab (wL L).val (2 * t1.val + 1) (2 * k.val + 1)) (offF fl (wL L).val (2 * t1.val + 1) (2 * k.val + 1)) 1 36 :=
        acc_step d L fl tab (wL L).val (2 * t1.val + 1) (2 * k.val + 1) 1 _ hRB ⟨35, by decide⟩ ⟨1, by decide⟩ _ rfl _ hw_v1775_5 _ (k1_off96_form ..) _ hc16
      have s_B1_36 : addf (AccMath.accVec (rowF fl tab (wL L).val (2 * t1.val + 1) (2 * k.val + 1)) (offF fl (wL L).val (2 * t1.val + 1) (2 * k.val + 1)) 1 36) (shapeCast S16 (pair1_next.sl.v1825_5 d L tab t1 k r g1 g2 hR hin h10) hc16) = AccMath.accVec (rowF fl tab (wL L).val (2 * t1.val + 1) (2 * k.val + 1)) (offF fl (wL L).val (2 * t1.val + 1) (2 * k.val + 1)) 1 37 :=
        acc_step d L fl tab (wL L).val (2 * t1.val + 1) (2 * k.val + 1) 1 _ hRB ⟨36, by decide⟩ ⟨1, by decide⟩ _ rfl _ hw_v1811_5 _ (k1_off97_form ..) _ hc16
      have s_B1_37 : addf (AccMath.accVec (rowF fl tab (wL L).val (2 * t1.val + 1) (2 * k.val + 1)) (offF fl (wL L).val (2 * t1.val + 1) (2 * k.val + 1)) 1 37) (shapeCast S16 (pair1_next.sl.v1861_5 d L tab t1 k r g1 g2 hR hin h10) hc16) = AccMath.accVec (rowF fl tab (wL L).val (2 * t1.val + 1) (2 * k.val + 1)) (offF fl (wL L).val (2 * t1.val + 1) (2 * k.val + 1)) 1 38 :=
        acc_step d L fl tab (wL L).val (2 * t1.val + 1) (2 * k.val + 1) 1 _ hRB ⟨37, by decide⟩ ⟨1, by decide⟩ _ rfl _ hw_v1847_5 _ (k1_off98_form ..) _ hc16
      have s_B1_38 : addf (AccMath.accVec (rowF fl tab (wL L).val (2 * t1.val + 1) (2 * k.val + 1)) (offF fl (wL L).val (2 * t1.val + 1) (2 * k.val + 1)) 1 38) (shapeCast S16 (pair1_next.sl.v1897_5 d L tab t1 k r g1 g2 hR hin h10) hc16) = AccMath.accVec (rowF fl tab (wL L).val (2 * t1.val + 1) (2 * k.val + 1)) (offF fl (wL L).val (2 * t1.val + 1) (2 * k.val + 1)) 1 39 :=
        acc_step d L fl tab (wL L).val (2 * t1.val + 1) (2 * k.val + 1) 1 _ hRB ⟨38, by decide⟩ ⟨1, by decide⟩ _ rfl _ hw_v1883_5 _ (k1_off99_form ..) _ hc16
      have s_B1_39 : addf (AccMath.accVec (rowF fl tab (wL L).val (2 * t1.val + 1) (2 * k.val + 1)) (offF fl (wL L).val (2 * t1.val + 1) (2 * k.val + 1)) 1 39) (shapeCast S16 (pair1_next.sl.v1933_5 d L tab t1 k r g1 g2 hR hin h10) hc16) = AccMath.accVec (rowF fl tab (wL L).val (2 * t1.val + 1) (2 * k.val + 1)) (offF fl (wL L).val (2 * t1.val + 1) (2 * k.val + 1)) 1 40 :=
        acc_step d L fl tab (wL L).val (2 * t1.val + 1) (2 * k.val + 1) 1 _ hRB ⟨39, by decide⟩ ⟨1, by decide⟩ _ rfl _ hw_v1919_5 _ (k1_off100_form ..) _ hc16
      have s_B1_40 : addf (AccMath.accVec (rowF fl tab (wL L).val (2 * t1.val + 1) (2 * k.val + 1)) (offF fl (wL L).val (2 * t1.val + 1) (2 * k.val + 1)) 1 40) (shapeCast S16 (pair1_next.sl.v1969_5 d L tab t1 k r g1 g2 hR hin h10) hc16) = AccMath.accVec (rowF fl tab (wL L).val (2 * t1.val + 1) (2 * k.val + 1)) (offF fl (wL L).val (2 * t1.val + 1) (2 * k.val + 1)) 1 41 :=
        acc_step d L fl tab (wL L).val (2 * t1.val + 1) (2 * k.val + 1) 1 _ hRB ⟨40, by decide⟩ ⟨1, by decide⟩ _ rfl _ hw_v1955_5 _ (k1_off101_form ..) _ hc16
      have s_B1_41 : addf (AccMath.accVec (rowF fl tab (wL L).val (2 * t1.val + 1) (2 * k.val + 1)) (offF fl (wL L).val (2 * t1.val + 1) (2 * k.val + 1)) 1 41) (shapeCast S16 (pair1_next.sl.v2005_5 d L tab t1 k r g1 g2 hR hin h10) hc16) = AccMath.accVec (rowF fl tab (wL L).val (2 * t1.val + 1) (2 * k.val + 1)) (offF fl (wL L).val (2 * t1.val + 1) (2 * k.val + 1)) 1 42 :=
        acc_step d L fl tab (wL L).val (2 * t1.val + 1) (2 * k.val + 1) 1 _ hRB ⟨41, by decide⟩ ⟨1, by decide⟩ _ rfl _ hw_v1991_5 _ (k1_off102_form ..) _ hc16
      have s_B1_42 : addf (AccMath.accVec (rowF fl tab (wL L).val (2 * t1.val + 1) (2 * k.val + 1)) (offF fl (wL L).val (2 * t1.val + 1) (2 * k.val + 1)) 1 42) (shapeCast S16 (pair1_next.sl.v2041_5 d L tab t1 k r g1 g2 hR hin h10) hc16) = AccMath.accVec (rowF fl tab (wL L).val (2 * t1.val + 1) (2 * k.val + 1)) (offF fl (wL L).val (2 * t1.val + 1) (2 * k.val + 1)) 1 43 :=
        acc_step d L fl tab (wL L).val (2 * t1.val + 1) (2 * k.val + 1) 1 _ hRB ⟨42, by decide⟩ ⟨1, by decide⟩ _ rfl _ hw_v2027_5 _ (k1_off103_form ..) _ hc16
      have s_B1_43 : addf (AccMath.accVec (rowF fl tab (wL L).val (2 * t1.val + 1) (2 * k.val + 1)) (offF fl (wL L).val (2 * t1.val + 1) (2 * k.val + 1)) 1 43) (shapeCast S16 (pair1_next.sl.v2077_5 d L tab t1 k r g1 g2 hR hin h10) hc16) = AccMath.accVec (rowF fl tab (wL L).val (2 * t1.val + 1) (2 * k.val + 1)) (offF fl (wL L).val (2 * t1.val + 1) (2 * k.val + 1)) 1 44 :=
        acc_step d L fl tab (wL L).val (2 * t1.val + 1) (2 * k.val + 1) 1 _ hRB ⟨43, by decide⟩ ⟨1, by decide⟩ _ rfl _ hw_v2063_5 _ (k1_off104_form ..) _ hc16
      have s_B1_44 : addf (AccMath.accVec (rowF fl tab (wL L).val (2 * t1.val + 1) (2 * k.val + 1)) (offF fl (wL L).val (2 * t1.val + 1) (2 * k.val + 1)) 1 44) (shapeCast S16 (pair1_next.sl.v2113_5 d L tab t1 k r g1 g2 hR hin h10) hc16) = AccMath.accVec (rowF fl tab (wL L).val (2 * t1.val + 1) (2 * k.val + 1)) (offF fl (wL L).val (2 * t1.val + 1) (2 * k.val + 1)) 1 45 :=
        acc_step d L fl tab (wL L).val (2 * t1.val + 1) (2 * k.val + 1) 1 _ hRB ⟨44, by decide⟩ ⟨1, by decide⟩ _ rfl _ hw_v2099_5 _ (k1_off105_form ..) _ hc16
      have s_B1_45 : addf (AccMath.accVec (rowF fl tab (wL L).val (2 * t1.val + 1) (2 * k.val + 1)) (offF fl (wL L).val (2 * t1.val + 1) (2 * k.val + 1)) 1 45) (shapeCast S16 (pair1_next.sl.v2149_5 d L tab t1 k r g1 g2 hR hin h10) hc16) = AccMath.accVec (rowF fl tab (wL L).val (2 * t1.val + 1) (2 * k.val + 1)) (offF fl (wL L).val (2 * t1.val + 1) (2 * k.val + 1)) 1 46 :=
        acc_step d L fl tab (wL L).val (2 * t1.val + 1) (2 * k.val + 1) 1 _ hRB ⟨45, by decide⟩ ⟨1, by decide⟩ _ rfl _ hw_v2135_5 _ (k1_off106_form ..) _ hc16
      have s_B1_46 : addf (AccMath.accVec (rowF fl tab (wL L).val (2 * t1.val + 1) (2 * k.val + 1)) (offF fl (wL L).val (2 * t1.val + 1) (2 * k.val + 1)) 1 46) (shapeCast S16 (pair1_next.sl.v2185_5 d L tab t1 k r g1 g2 hR hin h10) hc16) = AccMath.accVec (rowF fl tab (wL L).val (2 * t1.val + 1) (2 * k.val + 1)) (offF fl (wL L).val (2 * t1.val + 1) (2 * k.val + 1)) 1 47 :=
        acc_step d L fl tab (wL L).val (2 * t1.val + 1) (2 * k.val + 1) 1 _ hRB ⟨46, by decide⟩ ⟨1, by decide⟩ _ rfl _ hw_v2171_5 _ (k1_off107_form ..) _ hc16
      have s_B1_47 : addf (AccMath.accVec (rowF fl tab (wL L).val (2 * t1.val + 1) (2 * k.val + 1)) (offF fl (wL L).val (2 * t1.val + 1) (2 * k.val + 1)) 1 47) (shapeCast S16 (pair1_next.sl.v2221_5 d L tab t1 k r g1 g2 hR hin h10) hc16) = AccMath.accVec (rowF fl tab (wL L).val (2 * t1.val + 1) (2 * k.val + 1)) (offF fl (wL L).val (2 * t1.val + 1) (2 * k.val + 1)) 1 48 :=
        acc_step d L fl tab (wL L).val (2 * t1.val + 1) (2 * k.val + 1) 1 _ hRB ⟨47, by decide⟩ ⟨1, by decide⟩ _ rfl _ hw_v2207_5 _ (k1_off108_form ..) _ hc16
      have s_B1_48 : addf (AccMath.accVec (rowF fl tab (wL L).val (2 * t1.val + 1) (2 * k.val + 1)) (offF fl (wL L).val (2 * t1.val + 1) (2 * k.val + 1)) 1 48) (shapeCast S16 (pair1_next.sl.v1586 d L tab t1 k r g1 g2 hR hin h10) hc16) = AccMath.accVec (rowF fl tab (wL L).val (2 * t1.val + 1) (2 * k.val + 1)) (offF fl (wL L).val (2 * t1.val + 1) (2 * k.val + 1)) 1 49 :=
        acc_step d L fl tab (wL L).val (2 * t1.val + 1) (2 * k.val + 1) 1 _ hRB ⟨48, by decide⟩ ⟨1, by decide⟩ _ rfl _ hw_v1572 _ (k1_off110_form ..) _ hc16
      have s_B1_49 : addf (AccMath.accVec (rowF fl tab (wL L).val (2 * t1.val + 1) (2 * k.val + 1)) (offF fl (wL L).val (2 * t1.val + 1) (2 * k.val + 1)) 1 49) (shapeCast S16 (pair1_next.sl.v1620 d L tab t1 k r g1 g2 hR hin h10) hc16) = AccMath.accVec (rowF fl tab (wL L).val (2 * t1.val + 1) (2 * k.val + 1)) (offF fl (wL L).val (2 * t1.val + 1) (2 * k.val + 1)) 1 50 :=
        acc_step d L fl tab (wL L).val (2 * t1.val + 1) (2 * k.val + 1) 1 _ hRB ⟨49, by decide⟩ ⟨1, by decide⟩ _ rfl _ hw_v1606 _ (k1_off111_form ..) _ hc16
      have hP_B1 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val + 1)) (offF fl (wL L).val (2 * t1.val + 1) (2 * k.val + 1)) 1 0) (shapeCast S16 (pair1_next.sl.v1681_3 d L tab t1 k r g1 g2 hR hin h10) hc16)) (shapeCast S16 (pair1_next.sl.v1717_3 d L tab t1 k r g1 g2 hR hin h10) hc16)) (shapeCast S16 (pair1_next.sl.v1753_3 d L tab t1 k r g1 g2 hR hin h10) hc16)) (shapeCast S16 (pair1_next.sl.v1789_3 d L tab t1 k r g1 g2 hR hin h10) hc16)) (shapeCast S16 (pair1_next.sl.v1825_3 d L tab t1 k r g1 g2 hR hin h10) hc16)) (shapeCast S16 (pair1_next.sl.v1861_3 d L tab t1 k r g1 g2 hR hin h10) hc16)) (shapeCast S16 (pair1_next.sl.v1897_3 d L tab t1 k r g1 g2 hR hin h10) hc16)) (shapeCast S16 (pair1_next.sl.v1933_3 d L tab t1 k r g1 g2 hR hin h10) hc16)) (shapeCast S16 (pair1_next.sl.v1969_3 d L tab t1 k r g1 g2 hR hin h10) hc16)) (shapeCast S16 (pair1_next.sl.v2005_3 d L tab t1 k r g1 g2 hR hin h10) hc16)) (shapeCast S16 (pair1_next.sl.v2041_3 d L tab t1 k r g1 g2 hR hin h10) hc16)) (shapeCast S16 (pair1_next.sl.v2077_3 d L tab t1 k r g1 g2 hR hin h10) hc16)) (shapeCast S16 (pair1_next.sl.v2113_3 d L tab t1 k r g1 g2 hR hin h10) hc16)) (shapeCast S16 (pair1_next.sl.v2149_3 d L tab t1 k r g1 g2 hR hin h10) hc16)) (shapeCast S16 (pair1_next.sl.v2185_3 d L tab t1 k r g1 g2 hR hin h10) hc16)) (shapeCast S16 (pair1_next.sl.v2221_3 d L tab t1 k r g1 g2 hR hin h10) hc16)) (shapeCast S16 (pair1_next.sl.v1681_4 d L tab t1 k r g1 g2 hR hin h10) hc16)) (shapeCast S16 (pair1_next.sl.v1717_4 d L tab t1 k r g1 g2 hR hin h10) hc16)) (shapeCast S16 (pair1_next.sl.v1753_4 d L tab t1 k r g1 g2 hR hin h10) hc16)) (shapeCast S16 (pair1_next.sl.v1789_4 d L tab t1 k r g1 g2 hR hin h10) hc16)) (shapeCast S16 (pair1_next.sl.v1825_4 d L tab t1 k r g1 g2 hR hin h10) hc16)) (shapeCast S16 (pair1_next.sl.v1861_4 d L tab t1 k r g1 g2 hR hin h10) hc16)) (shapeCast S16 (pair1_next.sl.v1897_4 d L tab t1 k r g1 g2 hR hin h10) hc16)) (shapeCast S16 (pair1_next.sl.v1933_4 d L tab t1 k r g1 g2 hR hin h10) hc16)) (shapeCast S16 (pair1_next.sl.v1969_4 d L tab t1 k r g1 g2 hR hin h10) hc16)) (shapeCast S16 (pair1_next.sl.v2005_4 d L tab t1 k r g1 g2 hR hin h10) hc16)) (shapeCast S16 (pair1_next.sl.v2041_4 d L tab t1 k r g1 g2 hR hin h10) hc16)) (shapeCast S16 (pair1_next.sl.v2077_4 d L tab t1 k r g1 g2 hR hin h10) hc16)) (shapeCast S16 (pair1_next.sl.v2113_4 d L tab t1 k r g1 g2 hR hin h10) hc16)) (shapeCast S16 (pair1_next.sl.v2149_4 d L tab t1 k r g1 g2 hR hin h10) hc16)) (shapeCast S16 (pair1_next.sl.v2185_4 d L tab t1 k r g1 g2 hR hin h10) hc16)) (shapeCast S16 (pair1_next.sl.v2221_4 d L tab t1 k r g1 g2 hR hin h10) hc16)) (shapeCast S16 (pair1_next.sl.v1681_5 d L tab t1 k r g1 g2 hR hin h10) hc16)) (shapeCast S16 (pair1_next.sl.v1717_5 d L tab t1 k r g1 g2 hR hin h10) hc16)) (shapeCast S16 (pair1_next.sl.v1753_5 d L tab t1 k r g1 g2 hR hin h10) hc16)) (shapeCast S16 (pair1_next.sl.v1789_5 d L tab t1 k r g1 g2 hR hin h10) hc16)) (shapeCast S16 (pair1_next.sl.v1825_5 d L tab t1 k r g1 g2 hR hin h10) hc16)) (shapeCast S16 (pair1_next.sl.v1861_5 d L tab t1 k r g1 g2 hR hin h10) hc16)) (shapeCast S16 (pair1_next.sl.v1897_5 d L tab t1 k r g1 g2 hR hin h10) hc16)) (shapeCast S16 (pair1_next.sl.v1933_5 d L tab t1 k r g1 g2 hR hin h10) hc16)) (shapeCast S16 (pair1_next.sl.v1969_5 d L tab t1 k r g1 g2 hR hin h10) hc16)) (shapeCast S16 (pair1_next.sl.v2005_5 d L tab t1 k r g1 g2 hR hin h10) hc16)) (shapeCast S16 (pair1_next.sl.v2041_5 d L tab t1 k r g1 g2 hR hin h10) hc16)) (shapeCast S16 (pair1_next.sl.v2077_5 d L tab t1 k r g1 g2 hR hin h10) hc16)) (shapeCast S16 (pair1_next.sl.v2113_5 d L tab t1 k r g1 g2 hR hin h10) hc16)) (shapeCast S16 (pair1_next.sl.v2149_5 d L tab t1 k r g1 g2 hR hin h10) hc16)) (shapeCast S16 (pair1_next.sl.v2185_5 d L tab t1 k r g1 g2 hR hin h10) hc16)) (shapeCast S16 (pair1_next.sl.v2221_5 d L tab t1 k r g1 g2 hR hin h10) hc16)) (shapeCast S16 (pair1_next.sl.v1586 d L tab t1 k r g1 g2 hR hin h10) hc16)) (shapeCast S16 (pair1_next.sl.v1620 d L tab t1 k r g1 g2 hR hin h10) hc16)) hc1 x = Spec.bagPartial fl tab (128 * (wL L).val + 16 * (2 * t1.val + 1) + (2 * k.val + 1)) (16 * 1 + (x 2).val) 50 := fun x => by
        rw [s_B1_0, s_B1_1, s_B1_2, s_B1_3, s_B1_4, s_B1_5, s_B1_6, s_B1_7, s_B1_8, s_B1_9, s_B1_10, s_B1_11, s_B1_12, s_B1_13, s_B1_14, s_B1_15, s_B1_16, s_B1_17, s_B1_18, s_B1_19, s_B1_20, s_B1_21, s_B1_22, s_B1_23, s_B1_24, s_B1_25, s_B1_26, s_B1_27, s_B1_28, s_B1_29, s_B1_30, s_B1_31, s_B1_32, s_B1_33, s_B1_34, s_B1_35, s_B1_36, s_B1_37, s_B1_38, s_B1_39, s_B1_40, s_B1_41, s_B1_42, s_B1_43, s_B1_44, s_B1_45, s_B1_46, s_B1_47, s_B1_48, s_B1_49]
        exact payload_ok fl tab (wL L).val (2 * t1.val + 1) (2 * k.val + 1) ⟨1, by decide⟩ hc1 x
      have s_B2_0 : addf (AccMath.accVec (rowF fl tab (wL L).val (2 * t1.val + 1) (2 * k.val + 1)) (offF fl (wL L).val (2 * t1.val + 1) (2 * k.val + 1)) 2 0) (shapeCast S16 (pair1_next.sl.v1689_3 d L tab t1 k r g1 g2 hR hin h10) hc16) = AccMath.accVec (rowF fl tab (wL L).val (2 * t1.val + 1) (2 * k.val + 1)) (offF fl (wL L).val (2 * t1.val + 1) (2 * k.val + 1)) 2 1 :=
        acc_step d L fl tab (wL L).val (2 * t1.val + 1) (2 * k.val + 1) 1 _ hRB ⟨0, by decide⟩ ⟨2, by decide⟩ _ rfl _ hw_v1667_3 _ (k1_off93_form ..) _ hc16
      have s_B2_1 : addf (AccMath.accVec (rowF fl tab (wL L).val (2 * t1.val + 1) (2 * k.val + 1)) (offF fl (wL L).val (2 * t1.val + 1) (2 * k.val + 1)) 2 1) (shapeCast S16 (pair1_next.sl.v1725_3 d L tab t1 k r g1 g2 hR hin h10) hc16) = AccMath.accVec (rowF fl tab (wL L).val (2 * t1.val + 1) (2 * k.val + 1)) (offF fl (wL L).val (2 * t1.val + 1) (2 * k.val + 1)) 2 2 :=
        acc_step d L fl tab (wL L).val (2 * t1.val + 1) (2 * k.val + 1) 1 _ hRB ⟨1, by decide⟩ ⟨2, by decide⟩ _ rfl _ hw_v1703_3 _ (k1_off94_form ..) _ hc16
      have s_B2_2 : addf (AccMath.accVec (rowF fl tab (wL L).val (2 * t1.val + 1) (2 * k.val + 1)) (offF fl (wL L).val (2 * t1.val + 1) (2 * k.val + 1)) 2 2) (shapeCast S16 (pair1_next.sl.v1761_3 d L tab t1 k r g1 g2 hR hin h10) hc16) = AccMath.accVec (rowF fl tab (wL L).val (2 * t1.val + 1) (2 * k.val + 1)) (offF fl (wL L).val (2 * t1.val + 1) (2 * k.val + 1)) 2 3 :=
        acc_step d L fl tab (wL L).val (2 * t1.val + 1) (2 * k.val + 1) 1 _ hRB ⟨2, by decide⟩ ⟨2, by decide⟩ _ rfl _ hw_v1739_3 _ (k1_off95_form ..) _ hc16
      have s_B2_3 : addf (AccMath.accVec (rowF fl tab (wL L).val (2 * t1.val + 1) (2 * k.val + 1)) (offF fl (wL L).val (2 * t1.val + 1) (2 * k.val + 1)) 2 3) (shapeCast S16 (pair1_next.sl.v1797_3 d L tab t1 k r g1 g2 hR hin h10) hc16) = AccMath.accVec (rowF fl tab (wL L).val (2 * t1.val + 1) (2 * k.val + 1)) (offF fl (wL L).val (2 * t1.val + 1) (2 * k.val + 1)) 2 4 :=
        acc_step d L fl tab (wL L).val (2 * t1.val + 1) (2 * k.val + 1) 1 _ hRB ⟨3, by decide⟩ ⟨2, by decide⟩ _ rfl _ hw_v1775_3 _ (k1_off96_form ..) _ hc16
      have s_B2_4 : addf (AccMath.accVec (rowF fl tab (wL L).val (2 * t1.val + 1) (2 * k.val + 1)) (offF fl (wL L).val (2 * t1.val + 1) (2 * k.val + 1)) 2 4) (shapeCast S16 (pair1_next.sl.v1833_3 d L tab t1 k r g1 g2 hR hin h10) hc16) = AccMath.accVec (rowF fl tab (wL L).val (2 * t1.val + 1) (2 * k.val + 1)) (offF fl (wL L).val (2 * t1.val + 1) (2 * k.val + 1)) 2 5 :=
        acc_step d L fl tab (wL L).val (2 * t1.val + 1) (2 * k.val + 1) 1 _ hRB ⟨4, by decide⟩ ⟨2, by decide⟩ _ rfl _ hw_v1811_3 _ (k1_off97_form ..) _ hc16
      have s_B2_5 : addf (AccMath.accVec (rowF fl tab (wL L).val (2 * t1.val + 1) (2 * k.val + 1)) (offF fl (wL L).val (2 * t1.val + 1) (2 * k.val + 1)) 2 5) (shapeCast S16 (pair1_next.sl.v1869_3 d L tab t1 k r g1 g2 hR hin h10) hc16) = AccMath.accVec (rowF fl tab (wL L).val (2 * t1.val + 1) (2 * k.val + 1)) (offF fl (wL L).val (2 * t1.val + 1) (2 * k.val + 1)) 2 6 :=
        acc_step d L fl tab (wL L).val (2 * t1.val + 1) (2 * k.val + 1) 1 _ hRB ⟨5, by decide⟩ ⟨2, by decide⟩ _ rfl _ hw_v1847_3 _ (k1_off98_form ..) _ hc16
      have s_B2_6 : addf (AccMath.accVec (rowF fl tab (wL L).val (2 * t1.val + 1) (2 * k.val + 1)) (offF fl (wL L).val (2 * t1.val + 1) (2 * k.val + 1)) 2 6) (shapeCast S16 (pair1_next.sl.v1905_3 d L tab t1 k r g1 g2 hR hin h10) hc16) = AccMath.accVec (rowF fl tab (wL L).val (2 * t1.val + 1) (2 * k.val + 1)) (offF fl (wL L).val (2 * t1.val + 1) (2 * k.val + 1)) 2 7 :=
        acc_step d L fl tab (wL L).val (2 * t1.val + 1) (2 * k.val + 1) 1 _ hRB ⟨6, by decide⟩ ⟨2, by decide⟩ _ rfl _ hw_v1883_3 _ (k1_off99_form ..) _ hc16
      have s_B2_7 : addf (AccMath.accVec (rowF fl tab (wL L).val (2 * t1.val + 1) (2 * k.val + 1)) (offF fl (wL L).val (2 * t1.val + 1) (2 * k.val + 1)) 2 7) (shapeCast S16 (pair1_next.sl.v1941_3 d L tab t1 k r g1 g2 hR hin h10) hc16) = AccMath.accVec (rowF fl tab (wL L).val (2 * t1.val + 1) (2 * k.val + 1)) (offF fl (wL L).val (2 * t1.val + 1) (2 * k.val + 1)) 2 8 :=
        acc_step d L fl tab (wL L).val (2 * t1.val + 1) (2 * k.val + 1) 1 _ hRB ⟨7, by decide⟩ ⟨2, by decide⟩ _ rfl _ hw_v1919_3 _ (k1_off100_form ..) _ hc16
      have s_B2_8 : addf (AccMath.accVec (rowF fl tab (wL L).val (2 * t1.val + 1) (2 * k.val + 1)) (offF fl (wL L).val (2 * t1.val + 1) (2 * k.val + 1)) 2 8) (shapeCast S16 (pair1_next.sl.v1977_3 d L tab t1 k r g1 g2 hR hin h10) hc16) = AccMath.accVec (rowF fl tab (wL L).val (2 * t1.val + 1) (2 * k.val + 1)) (offF fl (wL L).val (2 * t1.val + 1) (2 * k.val + 1)) 2 9 :=
        acc_step d L fl tab (wL L).val (2 * t1.val + 1) (2 * k.val + 1) 1 _ hRB ⟨8, by decide⟩ ⟨2, by decide⟩ _ rfl _ hw_v1955_3 _ (k1_off101_form ..) _ hc16
      have s_B2_9 : addf (AccMath.accVec (rowF fl tab (wL L).val (2 * t1.val + 1) (2 * k.val + 1)) (offF fl (wL L).val (2 * t1.val + 1) (2 * k.val + 1)) 2 9) (shapeCast S16 (pair1_next.sl.v2013_3 d L tab t1 k r g1 g2 hR hin h10) hc16) = AccMath.accVec (rowF fl tab (wL L).val (2 * t1.val + 1) (2 * k.val + 1)) (offF fl (wL L).val (2 * t1.val + 1) (2 * k.val + 1)) 2 10 :=
        acc_step d L fl tab (wL L).val (2 * t1.val + 1) (2 * k.val + 1) 1 _ hRB ⟨9, by decide⟩ ⟨2, by decide⟩ _ rfl _ hw_v1991_3 _ (k1_off102_form ..) _ hc16
      have s_B2_10 : addf (AccMath.accVec (rowF fl tab (wL L).val (2 * t1.val + 1) (2 * k.val + 1)) (offF fl (wL L).val (2 * t1.val + 1) (2 * k.val + 1)) 2 10) (shapeCast S16 (pair1_next.sl.v2049_3 d L tab t1 k r g1 g2 hR hin h10) hc16) = AccMath.accVec (rowF fl tab (wL L).val (2 * t1.val + 1) (2 * k.val + 1)) (offF fl (wL L).val (2 * t1.val + 1) (2 * k.val + 1)) 2 11 :=
        acc_step d L fl tab (wL L).val (2 * t1.val + 1) (2 * k.val + 1) 1 _ hRB ⟨10, by decide⟩ ⟨2, by decide⟩ _ rfl _ hw_v2027_3 _ (k1_off103_form ..) _ hc16
      have s_B2_11 : addf (AccMath.accVec (rowF fl tab (wL L).val (2 * t1.val + 1) (2 * k.val + 1)) (offF fl (wL L).val (2 * t1.val + 1) (2 * k.val + 1)) 2 11) (shapeCast S16 (pair1_next.sl.v2085_3 d L tab t1 k r g1 g2 hR hin h10) hc16) = AccMath.accVec (rowF fl tab (wL L).val (2 * t1.val + 1) (2 * k.val + 1)) (offF fl (wL L).val (2 * t1.val + 1) (2 * k.val + 1)) 2 12 :=
        acc_step d L fl tab (wL L).val (2 * t1.val + 1) (2 * k.val + 1) 1 _ hRB ⟨11, by decide⟩ ⟨2, by decide⟩ _ rfl _ hw_v2063_3 _ (k1_off104_form ..) _ hc16
      have s_B2_12 : addf (AccMath.accVec (rowF fl tab (wL L).val (2 * t1.val + 1) (2 * k.val + 1)) (offF fl (wL L).val (2 * t1.val + 1) (2 * k.val + 1)) 2 12) (shapeCast S16 (pair1_next.sl.v2121_3 d L tab t1 k r g1 g2 hR hin h10) hc16) = AccMath.accVec (rowF fl tab (wL L).val (2 * t1.val + 1) (2 * k.val + 1)) (offF fl (wL L).val (2 * t1.val + 1) (2 * k.val + 1)) 2 13 :=
        acc_step d L fl tab (wL L).val (2 * t1.val + 1) (2 * k.val + 1) 1 _ hRB ⟨12, by decide⟩ ⟨2, by decide⟩ _ rfl _ hw_v2099_3 _ (k1_off105_form ..) _ hc16
      have s_B2_13 : addf (AccMath.accVec (rowF fl tab (wL L).val (2 * t1.val + 1) (2 * k.val + 1)) (offF fl (wL L).val (2 * t1.val + 1) (2 * k.val + 1)) 2 13) (shapeCast S16 (pair1_next.sl.v2157_3 d L tab t1 k r g1 g2 hR hin h10) hc16) = AccMath.accVec (rowF fl tab (wL L).val (2 * t1.val + 1) (2 * k.val + 1)) (offF fl (wL L).val (2 * t1.val + 1) (2 * k.val + 1)) 2 14 :=
        acc_step d L fl tab (wL L).val (2 * t1.val + 1) (2 * k.val + 1) 1 _ hRB ⟨13, by decide⟩ ⟨2, by decide⟩ _ rfl _ hw_v2135_3 _ (k1_off106_form ..) _ hc16
      have s_B2_14 : addf (AccMath.accVec (rowF fl tab (wL L).val (2 * t1.val + 1) (2 * k.val + 1)) (offF fl (wL L).val (2 * t1.val + 1) (2 * k.val + 1)) 2 14) (shapeCast S16 (pair1_next.sl.v2193_3 d L tab t1 k r g1 g2 hR hin h10) hc16) = AccMath.accVec (rowF fl tab (wL L).val (2 * t1.val + 1) (2 * k.val + 1)) (offF fl (wL L).val (2 * t1.val + 1) (2 * k.val + 1)) 2 15 :=
        acc_step d L fl tab (wL L).val (2 * t1.val + 1) (2 * k.val + 1) 1 _ hRB ⟨14, by decide⟩ ⟨2, by decide⟩ _ rfl _ hw_v2171_3 _ (k1_off107_form ..) _ hc16
      have s_B2_15 : addf (AccMath.accVec (rowF fl tab (wL L).val (2 * t1.val + 1) (2 * k.val + 1)) (offF fl (wL L).val (2 * t1.val + 1) (2 * k.val + 1)) 2 15) (shapeCast S16 (pair1_next.sl.v2229_3 d L tab t1 k r g1 g2 hR hin h10) hc16) = AccMath.accVec (rowF fl tab (wL L).val (2 * t1.val + 1) (2 * k.val + 1)) (offF fl (wL L).val (2 * t1.val + 1) (2 * k.val + 1)) 2 16 :=
        acc_step d L fl tab (wL L).val (2 * t1.val + 1) (2 * k.val + 1) 1 _ hRB ⟨15, by decide⟩ ⟨2, by decide⟩ _ rfl _ hw_v2207_3 _ (k1_off108_form ..) _ hc16
      have s_B2_16 : addf (AccMath.accVec (rowF fl tab (wL L).val (2 * t1.val + 1) (2 * k.val + 1)) (offF fl (wL L).val (2 * t1.val + 1) (2 * k.val + 1)) 2 16) (shapeCast S16 (pair1_next.sl.v1689_4 d L tab t1 k r g1 g2 hR hin h10) hc16) = AccMath.accVec (rowF fl tab (wL L).val (2 * t1.val + 1) (2 * k.val + 1)) (offF fl (wL L).val (2 * t1.val + 1) (2 * k.val + 1)) 2 17 :=
        acc_step d L fl tab (wL L).val (2 * t1.val + 1) (2 * k.val + 1) 1 _ hRB ⟨16, by decide⟩ ⟨2, by decide⟩ _ rfl _ hw_v1667_4 _ (k1_off93_form ..) _ hc16
      have s_B2_17 : addf (AccMath.accVec (rowF fl tab (wL L).val (2 * t1.val + 1) (2 * k.val + 1)) (offF fl (wL L).val (2 * t1.val + 1) (2 * k.val + 1)) 2 17) (shapeCast S16 (pair1_next.sl.v1725_4 d L tab t1 k r g1 g2 hR hin h10) hc16) = AccMath.accVec (rowF fl tab (wL L).val (2 * t1.val + 1) (2 * k.val + 1)) (offF fl (wL L).val (2 * t1.val + 1) (2 * k.val + 1)) 2 18 :=
        acc_step d L fl tab (wL L).val (2 * t1.val + 1) (2 * k.val + 1) 1 _ hRB ⟨17, by decide⟩ ⟨2, by decide⟩ _ rfl _ hw_v1703_4 _ (k1_off94_form ..) _ hc16
      have s_B2_18 : addf (AccMath.accVec (rowF fl tab (wL L).val (2 * t1.val + 1) (2 * k.val + 1)) (offF fl (wL L).val (2 * t1.val + 1) (2 * k.val + 1)) 2 18) (shapeCast S16 (pair1_next.sl.v1761_4 d L tab t1 k r g1 g2 hR hin h10) hc16) = AccMath.accVec (rowF fl tab (wL L).val (2 * t1.val + 1) (2 * k.val + 1)) (offF fl (wL L).val (2 * t1.val + 1) (2 * k.val + 1)) 2 19 :=
        acc_step d L fl tab (wL L).val (2 * t1.val + 1) (2 * k.val + 1) 1 _ hRB ⟨18, by decide⟩ ⟨2, by decide⟩ _ rfl _ hw_v1739_4 _ (k1_off95_form ..) _ hc16
      have s_B2_19 : addf (AccMath.accVec (rowF fl tab (wL L).val (2 * t1.val + 1) (2 * k.val + 1)) (offF fl (wL L).val (2 * t1.val + 1) (2 * k.val + 1)) 2 19) (shapeCast S16 (pair1_next.sl.v1797_4 d L tab t1 k r g1 g2 hR hin h10) hc16) = AccMath.accVec (rowF fl tab (wL L).val (2 * t1.val + 1) (2 * k.val + 1)) (offF fl (wL L).val (2 * t1.val + 1) (2 * k.val + 1)) 2 20 :=
        acc_step d L fl tab (wL L).val (2 * t1.val + 1) (2 * k.val + 1) 1 _ hRB ⟨19, by decide⟩ ⟨2, by decide⟩ _ rfl _ hw_v1775_4 _ (k1_off96_form ..) _ hc16
      have s_B2_20 : addf (AccMath.accVec (rowF fl tab (wL L).val (2 * t1.val + 1) (2 * k.val + 1)) (offF fl (wL L).val (2 * t1.val + 1) (2 * k.val + 1)) 2 20) (shapeCast S16 (pair1_next.sl.v1833_4 d L tab t1 k r g1 g2 hR hin h10) hc16) = AccMath.accVec (rowF fl tab (wL L).val (2 * t1.val + 1) (2 * k.val + 1)) (offF fl (wL L).val (2 * t1.val + 1) (2 * k.val + 1)) 2 21 :=
        acc_step d L fl tab (wL L).val (2 * t1.val + 1) (2 * k.val + 1) 1 _ hRB ⟨20, by decide⟩ ⟨2, by decide⟩ _ rfl _ hw_v1811_4 _ (k1_off97_form ..) _ hc16
      have s_B2_21 : addf (AccMath.accVec (rowF fl tab (wL L).val (2 * t1.val + 1) (2 * k.val + 1)) (offF fl (wL L).val (2 * t1.val + 1) (2 * k.val + 1)) 2 21) (shapeCast S16 (pair1_next.sl.v1869_4 d L tab t1 k r g1 g2 hR hin h10) hc16) = AccMath.accVec (rowF fl tab (wL L).val (2 * t1.val + 1) (2 * k.val + 1)) (offF fl (wL L).val (2 * t1.val + 1) (2 * k.val + 1)) 2 22 :=
        acc_step d L fl tab (wL L).val (2 * t1.val + 1) (2 * k.val + 1) 1 _ hRB ⟨21, by decide⟩ ⟨2, by decide⟩ _ rfl _ hw_v1847_4 _ (k1_off98_form ..) _ hc16
      have s_B2_22 : addf (AccMath.accVec (rowF fl tab (wL L).val (2 * t1.val + 1) (2 * k.val + 1)) (offF fl (wL L).val (2 * t1.val + 1) (2 * k.val + 1)) 2 22) (shapeCast S16 (pair1_next.sl.v1905_4 d L tab t1 k r g1 g2 hR hin h10) hc16) = AccMath.accVec (rowF fl tab (wL L).val (2 * t1.val + 1) (2 * k.val + 1)) (offF fl (wL L).val (2 * t1.val + 1) (2 * k.val + 1)) 2 23 :=
        acc_step d L fl tab (wL L).val (2 * t1.val + 1) (2 * k.val + 1) 1 _ hRB ⟨22, by decide⟩ ⟨2, by decide⟩ _ rfl _ hw_v1883_4 _ (k1_off99_form ..) _ hc16
      have s_B2_23 : addf (AccMath.accVec (rowF fl tab (wL L).val (2 * t1.val + 1) (2 * k.val + 1)) (offF fl (wL L).val (2 * t1.val + 1) (2 * k.val + 1)) 2 23) (shapeCast S16 (pair1_next.sl.v1941_4 d L tab t1 k r g1 g2 hR hin h10) hc16) = AccMath.accVec (rowF fl tab (wL L).val (2 * t1.val + 1) (2 * k.val + 1)) (offF fl (wL L).val (2 * t1.val + 1) (2 * k.val + 1)) 2 24 :=
        acc_step d L fl tab (wL L).val (2 * t1.val + 1) (2 * k.val + 1) 1 _ hRB ⟨23, by decide⟩ ⟨2, by decide⟩ _ rfl _ hw_v1919_4 _ (k1_off100_form ..) _ hc16
      have s_B2_24 : addf (AccMath.accVec (rowF fl tab (wL L).val (2 * t1.val + 1) (2 * k.val + 1)) (offF fl (wL L).val (2 * t1.val + 1) (2 * k.val + 1)) 2 24) (shapeCast S16 (pair1_next.sl.v1977_4 d L tab t1 k r g1 g2 hR hin h10) hc16) = AccMath.accVec (rowF fl tab (wL L).val (2 * t1.val + 1) (2 * k.val + 1)) (offF fl (wL L).val (2 * t1.val + 1) (2 * k.val + 1)) 2 25 :=
        acc_step d L fl tab (wL L).val (2 * t1.val + 1) (2 * k.val + 1) 1 _ hRB ⟨24, by decide⟩ ⟨2, by decide⟩ _ rfl _ hw_v1955_4 _ (k1_off101_form ..) _ hc16
      have s_B2_25 : addf (AccMath.accVec (rowF fl tab (wL L).val (2 * t1.val + 1) (2 * k.val + 1)) (offF fl (wL L).val (2 * t1.val + 1) (2 * k.val + 1)) 2 25) (shapeCast S16 (pair1_next.sl.v2013_4 d L tab t1 k r g1 g2 hR hin h10) hc16) = AccMath.accVec (rowF fl tab (wL L).val (2 * t1.val + 1) (2 * k.val + 1)) (offF fl (wL L).val (2 * t1.val + 1) (2 * k.val + 1)) 2 26 :=
        acc_step d L fl tab (wL L).val (2 * t1.val + 1) (2 * k.val + 1) 1 _ hRB ⟨25, by decide⟩ ⟨2, by decide⟩ _ rfl _ hw_v1991_4 _ (k1_off102_form ..) _ hc16
      have s_B2_26 : addf (AccMath.accVec (rowF fl tab (wL L).val (2 * t1.val + 1) (2 * k.val + 1)) (offF fl (wL L).val (2 * t1.val + 1) (2 * k.val + 1)) 2 26) (shapeCast S16 (pair1_next.sl.v2049_4 d L tab t1 k r g1 g2 hR hin h10) hc16) = AccMath.accVec (rowF fl tab (wL L).val (2 * t1.val + 1) (2 * k.val + 1)) (offF fl (wL L).val (2 * t1.val + 1) (2 * k.val + 1)) 2 27 :=
        acc_step d L fl tab (wL L).val (2 * t1.val + 1) (2 * k.val + 1) 1 _ hRB ⟨26, by decide⟩ ⟨2, by decide⟩ _ rfl _ hw_v2027_4 _ (k1_off103_form ..) _ hc16
      have s_B2_27 : addf (AccMath.accVec (rowF fl tab (wL L).val (2 * t1.val + 1) (2 * k.val + 1)) (offF fl (wL L).val (2 * t1.val + 1) (2 * k.val + 1)) 2 27) (shapeCast S16 (pair1_next.sl.v2085_4 d L tab t1 k r g1 g2 hR hin h10) hc16) = AccMath.accVec (rowF fl tab (wL L).val (2 * t1.val + 1) (2 * k.val + 1)) (offF fl (wL L).val (2 * t1.val + 1) (2 * k.val + 1)) 2 28 :=
        acc_step d L fl tab (wL L).val (2 * t1.val + 1) (2 * k.val + 1) 1 _ hRB ⟨27, by decide⟩ ⟨2, by decide⟩ _ rfl _ hw_v2063_4 _ (k1_off104_form ..) _ hc16
      have s_B2_28 : addf (AccMath.accVec (rowF fl tab (wL L).val (2 * t1.val + 1) (2 * k.val + 1)) (offF fl (wL L).val (2 * t1.val + 1) (2 * k.val + 1)) 2 28) (shapeCast S16 (pair1_next.sl.v2121_4 d L tab t1 k r g1 g2 hR hin h10) hc16) = AccMath.accVec (rowF fl tab (wL L).val (2 * t1.val + 1) (2 * k.val + 1)) (offF fl (wL L).val (2 * t1.val + 1) (2 * k.val + 1)) 2 29 :=
        acc_step d L fl tab (wL L).val (2 * t1.val + 1) (2 * k.val + 1) 1 _ hRB ⟨28, by decide⟩ ⟨2, by decide⟩ _ rfl _ hw_v2099_4 _ (k1_off105_form ..) _ hc16
      have s_B2_29 : addf (AccMath.accVec (rowF fl tab (wL L).val (2 * t1.val + 1) (2 * k.val + 1)) (offF fl (wL L).val (2 * t1.val + 1) (2 * k.val + 1)) 2 29) (shapeCast S16 (pair1_next.sl.v2157_4 d L tab t1 k r g1 g2 hR hin h10) hc16) = AccMath.accVec (rowF fl tab (wL L).val (2 * t1.val + 1) (2 * k.val + 1)) (offF fl (wL L).val (2 * t1.val + 1) (2 * k.val + 1)) 2 30 :=
        acc_step d L fl tab (wL L).val (2 * t1.val + 1) (2 * k.val + 1) 1 _ hRB ⟨29, by decide⟩ ⟨2, by decide⟩ _ rfl _ hw_v2135_4 _ (k1_off106_form ..) _ hc16
      have s_B2_30 : addf (AccMath.accVec (rowF fl tab (wL L).val (2 * t1.val + 1) (2 * k.val + 1)) (offF fl (wL L).val (2 * t1.val + 1) (2 * k.val + 1)) 2 30) (shapeCast S16 (pair1_next.sl.v2193_4 d L tab t1 k r g1 g2 hR hin h10) hc16) = AccMath.accVec (rowF fl tab (wL L).val (2 * t1.val + 1) (2 * k.val + 1)) (offF fl (wL L).val (2 * t1.val + 1) (2 * k.val + 1)) 2 31 :=
        acc_step d L fl tab (wL L).val (2 * t1.val + 1) (2 * k.val + 1) 1 _ hRB ⟨30, by decide⟩ ⟨2, by decide⟩ _ rfl _ hw_v2171_4 _ (k1_off107_form ..) _ hc16
      have s_B2_31 : addf (AccMath.accVec (rowF fl tab (wL L).val (2 * t1.val + 1) (2 * k.val + 1)) (offF fl (wL L).val (2 * t1.val + 1) (2 * k.val + 1)) 2 31) (shapeCast S16 (pair1_next.sl.v2229_4 d L tab t1 k r g1 g2 hR hin h10) hc16) = AccMath.accVec (rowF fl tab (wL L).val (2 * t1.val + 1) (2 * k.val + 1)) (offF fl (wL L).val (2 * t1.val + 1) (2 * k.val + 1)) 2 32 :=
        acc_step d L fl tab (wL L).val (2 * t1.val + 1) (2 * k.val + 1) 1 _ hRB ⟨31, by decide⟩ ⟨2, by decide⟩ _ rfl _ hw_v2207_4 _ (k1_off108_form ..) _ hc16
      have s_B2_32 : addf (AccMath.accVec (rowF fl tab (wL L).val (2 * t1.val + 1) (2 * k.val + 1)) (offF fl (wL L).val (2 * t1.val + 1) (2 * k.val + 1)) 2 32) (shapeCast S16 (pair1_next.sl.v1689_5 d L tab t1 k r g1 g2 hR hin h10) hc16) = AccMath.accVec (rowF fl tab (wL L).val (2 * t1.val + 1) (2 * k.val + 1)) (offF fl (wL L).val (2 * t1.val + 1) (2 * k.val + 1)) 2 33 :=
        acc_step d L fl tab (wL L).val (2 * t1.val + 1) (2 * k.val + 1) 1 _ hRB ⟨32, by decide⟩ ⟨2, by decide⟩ _ rfl _ hw_v1667_5 _ (k1_off93_form ..) _ hc16
      have s_B2_33 : addf (AccMath.accVec (rowF fl tab (wL L).val (2 * t1.val + 1) (2 * k.val + 1)) (offF fl (wL L).val (2 * t1.val + 1) (2 * k.val + 1)) 2 33) (shapeCast S16 (pair1_next.sl.v1725_5 d L tab t1 k r g1 g2 hR hin h10) hc16) = AccMath.accVec (rowF fl tab (wL L).val (2 * t1.val + 1) (2 * k.val + 1)) (offF fl (wL L).val (2 * t1.val + 1) (2 * k.val + 1)) 2 34 :=
        acc_step d L fl tab (wL L).val (2 * t1.val + 1) (2 * k.val + 1) 1 _ hRB ⟨33, by decide⟩ ⟨2, by decide⟩ _ rfl _ hw_v1703_5 _ (k1_off94_form ..) _ hc16
      have s_B2_34 : addf (AccMath.accVec (rowF fl tab (wL L).val (2 * t1.val + 1) (2 * k.val + 1)) (offF fl (wL L).val (2 * t1.val + 1) (2 * k.val + 1)) 2 34) (shapeCast S16 (pair1_next.sl.v1761_5 d L tab t1 k r g1 g2 hR hin h10) hc16) = AccMath.accVec (rowF fl tab (wL L).val (2 * t1.val + 1) (2 * k.val + 1)) (offF fl (wL L).val (2 * t1.val + 1) (2 * k.val + 1)) 2 35 :=
        acc_step d L fl tab (wL L).val (2 * t1.val + 1) (2 * k.val + 1) 1 _ hRB ⟨34, by decide⟩ ⟨2, by decide⟩ _ rfl _ hw_v1739_5 _ (k1_off95_form ..) _ hc16
      have s_B2_35 : addf (AccMath.accVec (rowF fl tab (wL L).val (2 * t1.val + 1) (2 * k.val + 1)) (offF fl (wL L).val (2 * t1.val + 1) (2 * k.val + 1)) 2 35) (shapeCast S16 (pair1_next.sl.v1797_5 d L tab t1 k r g1 g2 hR hin h10) hc16) = AccMath.accVec (rowF fl tab (wL L).val (2 * t1.val + 1) (2 * k.val + 1)) (offF fl (wL L).val (2 * t1.val + 1) (2 * k.val + 1)) 2 36 :=
        acc_step d L fl tab (wL L).val (2 * t1.val + 1) (2 * k.val + 1) 1 _ hRB ⟨35, by decide⟩ ⟨2, by decide⟩ _ rfl _ hw_v1775_5 _ (k1_off96_form ..) _ hc16
      have s_B2_36 : addf (AccMath.accVec (rowF fl tab (wL L).val (2 * t1.val + 1) (2 * k.val + 1)) (offF fl (wL L).val (2 * t1.val + 1) (2 * k.val + 1)) 2 36) (shapeCast S16 (pair1_next.sl.v1833_5 d L tab t1 k r g1 g2 hR hin h10) hc16) = AccMath.accVec (rowF fl tab (wL L).val (2 * t1.val + 1) (2 * k.val + 1)) (offF fl (wL L).val (2 * t1.val + 1) (2 * k.val + 1)) 2 37 :=
        acc_step d L fl tab (wL L).val (2 * t1.val + 1) (2 * k.val + 1) 1 _ hRB ⟨36, by decide⟩ ⟨2, by decide⟩ _ rfl _ hw_v1811_5 _ (k1_off97_form ..) _ hc16
      have s_B2_37 : addf (AccMath.accVec (rowF fl tab (wL L).val (2 * t1.val + 1) (2 * k.val + 1)) (offF fl (wL L).val (2 * t1.val + 1) (2 * k.val + 1)) 2 37) (shapeCast S16 (pair1_next.sl.v1869_5 d L tab t1 k r g1 g2 hR hin h10) hc16) = AccMath.accVec (rowF fl tab (wL L).val (2 * t1.val + 1) (2 * k.val + 1)) (offF fl (wL L).val (2 * t1.val + 1) (2 * k.val + 1)) 2 38 :=
        acc_step d L fl tab (wL L).val (2 * t1.val + 1) (2 * k.val + 1) 1 _ hRB ⟨37, by decide⟩ ⟨2, by decide⟩ _ rfl _ hw_v1847_5 _ (k1_off98_form ..) _ hc16
      have s_B2_38 : addf (AccMath.accVec (rowF fl tab (wL L).val (2 * t1.val + 1) (2 * k.val + 1)) (offF fl (wL L).val (2 * t1.val + 1) (2 * k.val + 1)) 2 38) (shapeCast S16 (pair1_next.sl.v1905_5 d L tab t1 k r g1 g2 hR hin h10) hc16) = AccMath.accVec (rowF fl tab (wL L).val (2 * t1.val + 1) (2 * k.val + 1)) (offF fl (wL L).val (2 * t1.val + 1) (2 * k.val + 1)) 2 39 :=
        acc_step d L fl tab (wL L).val (2 * t1.val + 1) (2 * k.val + 1) 1 _ hRB ⟨38, by decide⟩ ⟨2, by decide⟩ _ rfl _ hw_v1883_5 _ (k1_off99_form ..) _ hc16
      have s_B2_39 : addf (AccMath.accVec (rowF fl tab (wL L).val (2 * t1.val + 1) (2 * k.val + 1)) (offF fl (wL L).val (2 * t1.val + 1) (2 * k.val + 1)) 2 39) (shapeCast S16 (pair1_next.sl.v1941_5 d L tab t1 k r g1 g2 hR hin h10) hc16) = AccMath.accVec (rowF fl tab (wL L).val (2 * t1.val + 1) (2 * k.val + 1)) (offF fl (wL L).val (2 * t1.val + 1) (2 * k.val + 1)) 2 40 :=
        acc_step d L fl tab (wL L).val (2 * t1.val + 1) (2 * k.val + 1) 1 _ hRB ⟨39, by decide⟩ ⟨2, by decide⟩ _ rfl _ hw_v1919_5 _ (k1_off100_form ..) _ hc16
      have s_B2_40 : addf (AccMath.accVec (rowF fl tab (wL L).val (2 * t1.val + 1) (2 * k.val + 1)) (offF fl (wL L).val (2 * t1.val + 1) (2 * k.val + 1)) 2 40) (shapeCast S16 (pair1_next.sl.v1977_5 d L tab t1 k r g1 g2 hR hin h10) hc16) = AccMath.accVec (rowF fl tab (wL L).val (2 * t1.val + 1) (2 * k.val + 1)) (offF fl (wL L).val (2 * t1.val + 1) (2 * k.val + 1)) 2 41 :=
        acc_step d L fl tab (wL L).val (2 * t1.val + 1) (2 * k.val + 1) 1 _ hRB ⟨40, by decide⟩ ⟨2, by decide⟩ _ rfl _ hw_v1955_5 _ (k1_off101_form ..) _ hc16
      have s_B2_41 : addf (AccMath.accVec (rowF fl tab (wL L).val (2 * t1.val + 1) (2 * k.val + 1)) (offF fl (wL L).val (2 * t1.val + 1) (2 * k.val + 1)) 2 41) (shapeCast S16 (pair1_next.sl.v2013_5 d L tab t1 k r g1 g2 hR hin h10) hc16) = AccMath.accVec (rowF fl tab (wL L).val (2 * t1.val + 1) (2 * k.val + 1)) (offF fl (wL L).val (2 * t1.val + 1) (2 * k.val + 1)) 2 42 :=
        acc_step d L fl tab (wL L).val (2 * t1.val + 1) (2 * k.val + 1) 1 _ hRB ⟨41, by decide⟩ ⟨2, by decide⟩ _ rfl _ hw_v1991_5 _ (k1_off102_form ..) _ hc16
      have s_B2_42 : addf (AccMath.accVec (rowF fl tab (wL L).val (2 * t1.val + 1) (2 * k.val + 1)) (offF fl (wL L).val (2 * t1.val + 1) (2 * k.val + 1)) 2 42) (shapeCast S16 (pair1_next.sl.v2049_5 d L tab t1 k r g1 g2 hR hin h10) hc16) = AccMath.accVec (rowF fl tab (wL L).val (2 * t1.val + 1) (2 * k.val + 1)) (offF fl (wL L).val (2 * t1.val + 1) (2 * k.val + 1)) 2 43 :=
        acc_step d L fl tab (wL L).val (2 * t1.val + 1) (2 * k.val + 1) 1 _ hRB ⟨42, by decide⟩ ⟨2, by decide⟩ _ rfl _ hw_v2027_5 _ (k1_off103_form ..) _ hc16
      have s_B2_43 : addf (AccMath.accVec (rowF fl tab (wL L).val (2 * t1.val + 1) (2 * k.val + 1)) (offF fl (wL L).val (2 * t1.val + 1) (2 * k.val + 1)) 2 43) (shapeCast S16 (pair1_next.sl.v2085_5 d L tab t1 k r g1 g2 hR hin h10) hc16) = AccMath.accVec (rowF fl tab (wL L).val (2 * t1.val + 1) (2 * k.val + 1)) (offF fl (wL L).val (2 * t1.val + 1) (2 * k.val + 1)) 2 44 :=
        acc_step d L fl tab (wL L).val (2 * t1.val + 1) (2 * k.val + 1) 1 _ hRB ⟨43, by decide⟩ ⟨2, by decide⟩ _ rfl _ hw_v2063_5 _ (k1_off104_form ..) _ hc16
      have s_B2_44 : addf (AccMath.accVec (rowF fl tab (wL L).val (2 * t1.val + 1) (2 * k.val + 1)) (offF fl (wL L).val (2 * t1.val + 1) (2 * k.val + 1)) 2 44) (shapeCast S16 (pair1_next.sl.v2121_5 d L tab t1 k r g1 g2 hR hin h10) hc16) = AccMath.accVec (rowF fl tab (wL L).val (2 * t1.val + 1) (2 * k.val + 1)) (offF fl (wL L).val (2 * t1.val + 1) (2 * k.val + 1)) 2 45 :=
        acc_step d L fl tab (wL L).val (2 * t1.val + 1) (2 * k.val + 1) 1 _ hRB ⟨44, by decide⟩ ⟨2, by decide⟩ _ rfl _ hw_v2099_5 _ (k1_off105_form ..) _ hc16
      have s_B2_45 : addf (AccMath.accVec (rowF fl tab (wL L).val (2 * t1.val + 1) (2 * k.val + 1)) (offF fl (wL L).val (2 * t1.val + 1) (2 * k.val + 1)) 2 45) (shapeCast S16 (pair1_next.sl.v2157_5 d L tab t1 k r g1 g2 hR hin h10) hc16) = AccMath.accVec (rowF fl tab (wL L).val (2 * t1.val + 1) (2 * k.val + 1)) (offF fl (wL L).val (2 * t1.val + 1) (2 * k.val + 1)) 2 46 :=
        acc_step d L fl tab (wL L).val (2 * t1.val + 1) (2 * k.val + 1) 1 _ hRB ⟨45, by decide⟩ ⟨2, by decide⟩ _ rfl _ hw_v2135_5 _ (k1_off106_form ..) _ hc16
      have s_B2_46 : addf (AccMath.accVec (rowF fl tab (wL L).val (2 * t1.val + 1) (2 * k.val + 1)) (offF fl (wL L).val (2 * t1.val + 1) (2 * k.val + 1)) 2 46) (shapeCast S16 (pair1_next.sl.v2193_5 d L tab t1 k r g1 g2 hR hin h10) hc16) = AccMath.accVec (rowF fl tab (wL L).val (2 * t1.val + 1) (2 * k.val + 1)) (offF fl (wL L).val (2 * t1.val + 1) (2 * k.val + 1)) 2 47 :=
        acc_step d L fl tab (wL L).val (2 * t1.val + 1) (2 * k.val + 1) 1 _ hRB ⟨46, by decide⟩ ⟨2, by decide⟩ _ rfl _ hw_v2171_5 _ (k1_off107_form ..) _ hc16
      have s_B2_47 : addf (AccMath.accVec (rowF fl tab (wL L).val (2 * t1.val + 1) (2 * k.val + 1)) (offF fl (wL L).val (2 * t1.val + 1) (2 * k.val + 1)) 2 47) (shapeCast S16 (pair1_next.sl.v2229_5 d L tab t1 k r g1 g2 hR hin h10) hc16) = AccMath.accVec (rowF fl tab (wL L).val (2 * t1.val + 1) (2 * k.val + 1)) (offF fl (wL L).val (2 * t1.val + 1) (2 * k.val + 1)) 2 48 :=
        acc_step d L fl tab (wL L).val (2 * t1.val + 1) (2 * k.val + 1) 1 _ hRB ⟨47, by decide⟩ ⟨2, by decide⟩ _ rfl _ hw_v2207_5 _ (k1_off108_form ..) _ hc16
      have s_B2_48 : addf (AccMath.accVec (rowF fl tab (wL L).val (2 * t1.val + 1) (2 * k.val + 1)) (offF fl (wL L).val (2 * t1.val + 1) (2 * k.val + 1)) 2 48) (shapeCast S16 (pair1_next.sl.v1594 d L tab t1 k r g1 g2 hR hin h10) hc16) = AccMath.accVec (rowF fl tab (wL L).val (2 * t1.val + 1) (2 * k.val + 1)) (offF fl (wL L).val (2 * t1.val + 1) (2 * k.val + 1)) 2 49 :=
        acc_step d L fl tab (wL L).val (2 * t1.val + 1) (2 * k.val + 1) 1 _ hRB ⟨48, by decide⟩ ⟨2, by decide⟩ _ rfl _ hw_v1572 _ (k1_off110_form ..) _ hc16
      have s_B2_49 : addf (AccMath.accVec (rowF fl tab (wL L).val (2 * t1.val + 1) (2 * k.val + 1)) (offF fl (wL L).val (2 * t1.val + 1) (2 * k.val + 1)) 2 49) (shapeCast S16 (pair1_next.sl.v1628 d L tab t1 k r g1 g2 hR hin h10) hc16) = AccMath.accVec (rowF fl tab (wL L).val (2 * t1.val + 1) (2 * k.val + 1)) (offF fl (wL L).val (2 * t1.val + 1) (2 * k.val + 1)) 2 50 :=
        acc_step d L fl tab (wL L).val (2 * t1.val + 1) (2 * k.val + 1) 1 _ hRB ⟨49, by decide⟩ ⟨2, by decide⟩ _ rfl _ hw_v1606 _ (k1_off111_form ..) _ hc16
      have hP_B2 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val + 1)) (offF fl (wL L).val (2 * t1.val + 1) (2 * k.val + 1)) 2 0) (shapeCast S16 (pair1_next.sl.v1689_3 d L tab t1 k r g1 g2 hR hin h10) hc16)) (shapeCast S16 (pair1_next.sl.v1725_3 d L tab t1 k r g1 g2 hR hin h10) hc16)) (shapeCast S16 (pair1_next.sl.v1761_3 d L tab t1 k r g1 g2 hR hin h10) hc16)) (shapeCast S16 (pair1_next.sl.v1797_3 d L tab t1 k r g1 g2 hR hin h10) hc16)) (shapeCast S16 (pair1_next.sl.v1833_3 d L tab t1 k r g1 g2 hR hin h10) hc16)) (shapeCast S16 (pair1_next.sl.v1869_3 d L tab t1 k r g1 g2 hR hin h10) hc16)) (shapeCast S16 (pair1_next.sl.v1905_3 d L tab t1 k r g1 g2 hR hin h10) hc16)) (shapeCast S16 (pair1_next.sl.v1941_3 d L tab t1 k r g1 g2 hR hin h10) hc16)) (shapeCast S16 (pair1_next.sl.v1977_3 d L tab t1 k r g1 g2 hR hin h10) hc16)) (shapeCast S16 (pair1_next.sl.v2013_3 d L tab t1 k r g1 g2 hR hin h10) hc16)) (shapeCast S16 (pair1_next.sl.v2049_3 d L tab t1 k r g1 g2 hR hin h10) hc16)) (shapeCast S16 (pair1_next.sl.v2085_3 d L tab t1 k r g1 g2 hR hin h10) hc16)) (shapeCast S16 (pair1_next.sl.v2121_3 d L tab t1 k r g1 g2 hR hin h10) hc16)) (shapeCast S16 (pair1_next.sl.v2157_3 d L tab t1 k r g1 g2 hR hin h10) hc16)) (shapeCast S16 (pair1_next.sl.v2193_3 d L tab t1 k r g1 g2 hR hin h10) hc16)) (shapeCast S16 (pair1_next.sl.v2229_3 d L tab t1 k r g1 g2 hR hin h10) hc16)) (shapeCast S16 (pair1_next.sl.v1689_4 d L tab t1 k r g1 g2 hR hin h10) hc16)) (shapeCast S16 (pair1_next.sl.v1725_4 d L tab t1 k r g1 g2 hR hin h10) hc16)) (shapeCast S16 (pair1_next.sl.v1761_4 d L tab t1 k r g1 g2 hR hin h10) hc16)) (shapeCast S16 (pair1_next.sl.v1797_4 d L tab t1 k r g1 g2 hR hin h10) hc16)) (shapeCast S16 (pair1_next.sl.v1833_4 d L tab t1 k r g1 g2 hR hin h10) hc16)) (shapeCast S16 (pair1_next.sl.v1869_4 d L tab t1 k r g1 g2 hR hin h10) hc16)) (shapeCast S16 (pair1_next.sl.v1905_4 d L tab t1 k r g1 g2 hR hin h10) hc16)) (shapeCast S16 (pair1_next.sl.v1941_4 d L tab t1 k r g1 g2 hR hin h10) hc16)) (shapeCast S16 (pair1_next.sl.v1977_4 d L tab t1 k r g1 g2 hR hin h10) hc16)) (shapeCast S16 (pair1_next.sl.v2013_4 d L tab t1 k r g1 g2 hR hin h10) hc16)) (shapeCast S16 (pair1_next.sl.v2049_4 d L tab t1 k r g1 g2 hR hin h10) hc16)) (shapeCast S16 (pair1_next.sl.v2085_4 d L tab t1 k r g1 g2 hR hin h10) hc16)) (shapeCast S16 (pair1_next.sl.v2121_4 d L tab t1 k r g1 g2 hR hin h10) hc16)) (shapeCast S16 (pair1_next.sl.v2157_4 d L tab t1 k r g1 g2 hR hin h10) hc16)) (shapeCast S16 (pair1_next.sl.v2193_4 d L tab t1 k r g1 g2 hR hin h10) hc16)) (shapeCast S16 (pair1_next.sl.v2229_4 d L tab t1 k r g1 g2 hR hin h10) hc16)) (shapeCast S16 (pair1_next.sl.v1689_5 d L tab t1 k r g1 g2 hR hin h10) hc16)) (shapeCast S16 (pair1_next.sl.v1725_5 d L tab t1 k r g1 g2 hR hin h10) hc16)) (shapeCast S16 (pair1_next.sl.v1761_5 d L tab t1 k r g1 g2 hR hin h10) hc16)) (shapeCast S16 (pair1_next.sl.v1797_5 d L tab t1 k r g1 g2 hR hin h10) hc16)) (shapeCast S16 (pair1_next.sl.v1833_5 d L tab t1 k r g1 g2 hR hin h10) hc16)) (shapeCast S16 (pair1_next.sl.v1869_5 d L tab t1 k r g1 g2 hR hin h10) hc16)) (shapeCast S16 (pair1_next.sl.v1905_5 d L tab t1 k r g1 g2 hR hin h10) hc16)) (shapeCast S16 (pair1_next.sl.v1941_5 d L tab t1 k r g1 g2 hR hin h10) hc16)) (shapeCast S16 (pair1_next.sl.v1977_5 d L tab t1 k r g1 g2 hR hin h10) hc16)) (shapeCast S16 (pair1_next.sl.v2013_5 d L tab t1 k r g1 g2 hR hin h10) hc16)) (shapeCast S16 (pair1_next.sl.v2049_5 d L tab t1 k r g1 g2 hR hin h10) hc16)) (shapeCast S16 (pair1_next.sl.v2085_5 d L tab t1 k r g1 g2 hR hin h10) hc16)) (shapeCast S16 (pair1_next.sl.v2121_5 d L tab t1 k r g1 g2 hR hin h10) hc16)) (shapeCast S16 (pair1_next.sl.v2157_5 d L tab t1 k r g1 g2 hR hin h10) hc16)) (shapeCast S16 (pair1_next.sl.v2193_5 d L tab t1 k r g1 g2 hR hin h10) hc16)) (shapeCast S16 (pair1_next.sl.v2229_5 d L tab t1 k r g1 g2 hR hin h10) hc16)) (shapeCast S16 (pair1_next.sl.v1594 d L tab t1 k r g1 g2 hR hin h10) hc16)) (shapeCast S16 (pair1_next.sl.v1628 d L tab t1 k r g1 g2 hR hin h10) hc16)) hc1 x = Spec.bagPartial fl tab (128 * (wL L).val + 16 * (2 * t1.val + 1) + (2 * k.val + 1)) (16 * 2 + (x 2).val) 50 := fun x => by
        rw [s_B2_0, s_B2_1, s_B2_2, s_B2_3, s_B2_4, s_B2_5, s_B2_6, s_B2_7, s_B2_8, s_B2_9, s_B2_10, s_B2_11, s_B2_12, s_B2_13, s_B2_14, s_B2_15, s_B2_16, s_B2_17, s_B2_18, s_B2_19, s_B2_20, s_B2_21, s_B2_22, s_B2_23, s_B2_24, s_B2_25, s_B2_26, s_B2_27, s_B2_28, s_B2_29, s_B2_30, s_B2_31, s_B2_32, s_B2_33, s_B2_34, s_B2_35, s_B2_36, s_B2_37, s_B2_38, s_B2_39, s_B2_40, s_B2_41, s_B2_42, s_B2_43, s_B2_44, s_B2_45, s_B2_46, s_B2_47, s_B2_48, s_B2_49]
        exact payload_ok fl tab (wL L).val (2 * t1.val + 1) (2 * k.val + 1) ⟨2, by decide⟩ hc1 x
      have s_B3_0 : addf (AccMath.accVec (rowF fl tab (wL L).val (2 * t1.val + 1) (2 * k.val + 1)) (offF fl (wL L).val (2 * t1.val + 1) (2 * k.val + 1)) 3 0) (shapeCast S16 (pair1_next.sl.v1697_3 d L tab t1 k r g1 g2 hR hin h10) hc16) = AccMath.accVec (rowF fl tab (wL L).val (2 * t1.val + 1) (2 * k.val + 1)) (offF fl (wL L).val (2 * t1.val + 1) (2 * k.val + 1)) 3 1 :=
        acc_step d L fl tab (wL L).val (2 * t1.val + 1) (2 * k.val + 1) 1 _ hRB ⟨0, by decide⟩ ⟨3, by decide⟩ _ rfl _ hw_v1667_3 _ (k1_off93_form ..) _ hc16
      have s_B3_1 : addf (AccMath.accVec (rowF fl tab (wL L).val (2 * t1.val + 1) (2 * k.val + 1)) (offF fl (wL L).val (2 * t1.val + 1) (2 * k.val + 1)) 3 1) (shapeCast S16 (pair1_next.sl.v1733_3 d L tab t1 k r g1 g2 hR hin h10) hc16) = AccMath.accVec (rowF fl tab (wL L).val (2 * t1.val + 1) (2 * k.val + 1)) (offF fl (wL L).val (2 * t1.val + 1) (2 * k.val + 1)) 3 2 :=
        acc_step d L fl tab (wL L).val (2 * t1.val + 1) (2 * k.val + 1) 1 _ hRB ⟨1, by decide⟩ ⟨3, by decide⟩ _ rfl _ hw_v1703_3 _ (k1_off94_form ..) _ hc16
      have s_B3_2 : addf (AccMath.accVec (rowF fl tab (wL L).val (2 * t1.val + 1) (2 * k.val + 1)) (offF fl (wL L).val (2 * t1.val + 1) (2 * k.val + 1)) 3 2) (shapeCast S16 (pair1_next.sl.v1769_3 d L tab t1 k r g1 g2 hR hin h10) hc16) = AccMath.accVec (rowF fl tab (wL L).val (2 * t1.val + 1) (2 * k.val + 1)) (offF fl (wL L).val (2 * t1.val + 1) (2 * k.val + 1)) 3 3 :=
        acc_step d L fl tab (wL L).val (2 * t1.val + 1) (2 * k.val + 1) 1 _ hRB ⟨2, by decide⟩ ⟨3, by decide⟩ _ rfl _ hw_v1739_3 _ (k1_off95_form ..) _ hc16
      have s_B3_3 : addf (AccMath.accVec (rowF fl tab (wL L).val (2 * t1.val + 1) (2 * k.val + 1)) (offF fl (wL L).val (2 * t1.val + 1) (2 * k.val + 1)) 3 3) (shapeCast S16 (pair1_next.sl.v1805_3 d L tab t1 k r g1 g2 hR hin h10) hc16) = AccMath.accVec (rowF fl tab (wL L).val (2 * t1.val + 1) (2 * k.val + 1)) (offF fl (wL L).val (2 * t1.val + 1) (2 * k.val + 1)) 3 4 :=
        acc_step d L fl tab (wL L).val (2 * t1.val + 1) (2 * k.val + 1) 1 _ hRB ⟨3, by decide⟩ ⟨3, by decide⟩ _ rfl _ hw_v1775_3 _ (k1_off96_form ..) _ hc16
      have s_B3_4 : addf (AccMath.accVec (rowF fl tab (wL L).val (2 * t1.val + 1) (2 * k.val + 1)) (offF fl (wL L).val (2 * t1.val + 1) (2 * k.val + 1)) 3 4) (shapeCast S16 (pair1_next.sl.v1841_3 d L tab t1 k r g1 g2 hR hin h10) hc16) = AccMath.accVec (rowF fl tab (wL L).val (2 * t1.val + 1) (2 * k.val + 1)) (offF fl (wL L).val (2 * t1.val + 1) (2 * k.val + 1)) 3 5 :=
        acc_step d L fl tab (wL L).val (2 * t1.val + 1) (2 * k.val + 1) 1 _ hRB ⟨4, by decide⟩ ⟨3, by decide⟩ _ rfl _ hw_v1811_3 _ (k1_off97_form ..) _ hc16
      have s_B3_5 : addf (AccMath.accVec (rowF fl tab (wL L).val (2 * t1.val + 1) (2 * k.val + 1)) (offF fl (wL L).val (2 * t1.val + 1) (2 * k.val + 1)) 3 5) (shapeCast S16 (pair1_next.sl.v1877_3 d L tab t1 k r g1 g2 hR hin h10) hc16) = AccMath.accVec (rowF fl tab (wL L).val (2 * t1.val + 1) (2 * k.val + 1)) (offF fl (wL L).val (2 * t1.val + 1) (2 * k.val + 1)) 3 6 :=
        acc_step d L fl tab (wL L).val (2 * t1.val + 1) (2 * k.val + 1) 1 _ hRB ⟨5, by decide⟩ ⟨3, by decide⟩ _ rfl _ hw_v1847_3 _ (k1_off98_form ..) _ hc16
      have s_B3_6 : addf (AccMath.accVec (rowF fl tab (wL L).val (2 * t1.val + 1) (2 * k.val + 1)) (offF fl (wL L).val (2 * t1.val + 1) (2 * k.val + 1)) 3 6) (shapeCast S16 (pair1_next.sl.v1913_3 d L tab t1 k r g1 g2 hR hin h10) hc16) = AccMath.accVec (rowF fl tab (wL L).val (2 * t1.val + 1) (2 * k.val + 1)) (offF fl (wL L).val (2 * t1.val + 1) (2 * k.val + 1)) 3 7 :=
        acc_step d L fl tab (wL L).val (2 * t1.val + 1) (2 * k.val + 1) 1 _ hRB ⟨6, by decide⟩ ⟨3, by decide⟩ _ rfl _ hw_v1883_3 _ (k1_off99_form ..) _ hc16
      have s_B3_7 : addf (AccMath.accVec (rowF fl tab (wL L).val (2 * t1.val + 1) (2 * k.val + 1)) (offF fl (wL L).val (2 * t1.val + 1) (2 * k.val + 1)) 3 7) (shapeCast S16 (pair1_next.sl.v1949_3 d L tab t1 k r g1 g2 hR hin h10) hc16) = AccMath.accVec (rowF fl tab (wL L).val (2 * t1.val + 1) (2 * k.val + 1)) (offF fl (wL L).val (2 * t1.val + 1) (2 * k.val + 1)) 3 8 :=
        acc_step d L fl tab (wL L).val (2 * t1.val + 1) (2 * k.val + 1) 1 _ hRB ⟨7, by decide⟩ ⟨3, by decide⟩ _ rfl _ hw_v1919_3 _ (k1_off100_form ..) _ hc16
      have s_B3_8 : addf (AccMath.accVec (rowF fl tab (wL L).val (2 * t1.val + 1) (2 * k.val + 1)) (offF fl (wL L).val (2 * t1.val + 1) (2 * k.val + 1)) 3 8) (shapeCast S16 (pair1_next.sl.v1985_3 d L tab t1 k r g1 g2 hR hin h10) hc16) = AccMath.accVec (rowF fl tab (wL L).val (2 * t1.val + 1) (2 * k.val + 1)) (offF fl (wL L).val (2 * t1.val + 1) (2 * k.val + 1)) 3 9 :=
        acc_step d L fl tab (wL L).val (2 * t1.val + 1) (2 * k.val + 1) 1 _ hRB ⟨8, by decide⟩ ⟨3, by decide⟩ _ rfl _ hw_v1955_3 _ (k1_off101_form ..) _ hc16
      have s_B3_9 : addf (AccMath.accVec (rowF fl tab (wL L).val (2 * t1.val + 1) (2 * k.val + 1)) (offF fl (wL L).val (2 * t1.val + 1) (2 * k.val + 1)) 3 9) (shapeCast S16 (pair1_next.sl.v2021_3 d L tab t1 k r g1 g2 hR hin h10) hc16) = AccMath.accVec (rowF fl tab (wL L).val (2 * t1.val + 1) (2 * k.val + 1)) (offF fl (wL L).val (2 * t1.val + 1) (2 * k.val + 1)) 3 10 :=
        acc_step d L fl tab (wL L).val (2 * t1.val + 1) (2 * k.val + 1) 1 _ hRB ⟨9, by decide⟩ ⟨3, by decide⟩ _ rfl _ hw_v1991_3 _ (k1_off102_form ..) _ hc16
      have s_B3_10 : addf (AccMath.accVec (rowF fl tab (wL L).val (2 * t1.val + 1) (2 * k.val + 1)) (offF fl (wL L).val (2 * t1.val + 1) (2 * k.val + 1)) 3 10) (shapeCast S16 (pair1_next.sl.v2057_3 d L tab t1 k r g1 g2 hR hin h10) hc16) = AccMath.accVec (rowF fl tab (wL L).val (2 * t1.val + 1) (2 * k.val + 1)) (offF fl (wL L).val (2 * t1.val + 1) (2 * k.val + 1)) 3 11 :=
        acc_step d L fl tab (wL L).val (2 * t1.val + 1) (2 * k.val + 1) 1 _ hRB ⟨10, by decide⟩ ⟨3, by decide⟩ _ rfl _ hw_v2027_3 _ (k1_off103_form ..) _ hc16
      have s_B3_11 : addf (AccMath.accVec (rowF fl tab (wL L).val (2 * t1.val + 1) (2 * k.val + 1)) (offF fl (wL L).val (2 * t1.val + 1) (2 * k.val + 1)) 3 11) (shapeCast S16 (pair1_next.sl.v2093_3 d L tab t1 k r g1 g2 hR hin h10) hc16) = AccMath.accVec (rowF fl tab (wL L).val (2 * t1.val + 1) (2 * k.val + 1)) (offF fl (wL L).val (2 * t1.val + 1) (2 * k.val + 1)) 3 12 :=
        acc_step d L fl tab (wL L).val (2 * t1.val + 1) (2 * k.val + 1) 1 _ hRB ⟨11, by decide⟩ ⟨3, by decide⟩ _ rfl _ hw_v2063_3 _ (k1_off104_form ..) _ hc16
      have s_B3_12 : addf (AccMath.accVec (rowF fl tab (wL L).val (2 * t1.val + 1) (2 * k.val + 1)) (offF fl (wL L).val (2 * t1.val + 1) (2 * k.val + 1)) 3 12) (shapeCast S16 (pair1_next.sl.v2129_3 d L tab t1 k r g1 g2 hR hin h10) hc16) = AccMath.accVec (rowF fl tab (wL L).val (2 * t1.val + 1) (2 * k.val + 1)) (offF fl (wL L).val (2 * t1.val + 1) (2 * k.val + 1)) 3 13 :=
        acc_step d L fl tab (wL L).val (2 * t1.val + 1) (2 * k.val + 1) 1 _ hRB ⟨12, by decide⟩ ⟨3, by decide⟩ _ rfl _ hw_v2099_3 _ (k1_off105_form ..) _ hc16
      have s_B3_13 : addf (AccMath.accVec (rowF fl tab (wL L).val (2 * t1.val + 1) (2 * k.val + 1)) (offF fl (wL L).val (2 * t1.val + 1) (2 * k.val + 1)) 3 13) (shapeCast S16 (pair1_next.sl.v2165_3 d L tab t1 k r g1 g2 hR hin h10) hc16) = AccMath.accVec (rowF fl tab (wL L).val (2 * t1.val + 1) (2 * k.val + 1)) (offF fl (wL L).val (2 * t1.val + 1) (2 * k.val + 1)) 3 14 :=
        acc_step d L fl tab (wL L).val (2 * t1.val + 1) (2 * k.val + 1) 1 _ hRB ⟨13, by decide⟩ ⟨3, by decide⟩ _ rfl _ hw_v2135_3 _ (k1_off106_form ..) _ hc16
      have s_B3_14 : addf (AccMath.accVec (rowF fl tab (wL L).val (2 * t1.val + 1) (2 * k.val + 1)) (offF fl (wL L).val (2 * t1.val + 1) (2 * k.val + 1)) 3 14) (shapeCast S16 (pair1_next.sl.v2201_3 d L tab t1 k r g1 g2 hR hin h10) hc16) = AccMath.accVec (rowF fl tab (wL L).val (2 * t1.val + 1) (2 * k.val + 1)) (offF fl (wL L).val (2 * t1.val + 1) (2 * k.val + 1)) 3 15 :=
        acc_step d L fl tab (wL L).val (2 * t1.val + 1) (2 * k.val + 1) 1 _ hRB ⟨14, by decide⟩ ⟨3, by decide⟩ _ rfl _ hw_v2171_3 _ (k1_off107_form ..) _ hc16
      have s_B3_15 : addf (AccMath.accVec (rowF fl tab (wL L).val (2 * t1.val + 1) (2 * k.val + 1)) (offF fl (wL L).val (2 * t1.val + 1) (2 * k.val + 1)) 3 15) (shapeCast S16 (pair1_next.sl.v2237_3 d L tab t1 k r g1 g2 hR hin h10) hc16) = AccMath.accVec (rowF fl tab (wL L).val (2 * t1.val + 1) (2 * k.val + 1)) (offF fl (wL L).val (2 * t1.val + 1) (2 * k.val + 1)) 3 16 :=
        acc_step d L fl tab (wL L).val (2 * t1.val + 1) (2 * k.val + 1) 1 _ hRB ⟨15, by decide⟩ ⟨3, by decide⟩ _ rfl _ hw_v2207_3 _ (k1_off108_form ..) _ hc16
      have s_B3_16 : addf (AccMath.accVec (rowF fl tab (wL L).val (2 * t1.val + 1) (2 * k.val + 1)) (offF fl (wL L).val (2 * t1.val + 1) (2 * k.val + 1)) 3 16) (shapeCast S16 (pair1_next.sl.v1697_4 d L tab t1 k r g1 g2 hR hin h10) hc16) = AccMath.accVec (rowF fl tab (wL L).val (2 * t1.val + 1) (2 * k.val + 1)) (offF fl (wL L).val (2 * t1.val + 1) (2 * k.val + 1)) 3 17 :=
        acc_step d L fl tab (wL L).val (2 * t1.val + 1) (2 * k.val + 1) 1 _ hRB ⟨16, by decide⟩ ⟨3, by decide⟩ _ rfl _ hw_v1667_4 _ (k1_off93_form ..) _ hc16
      have s_B3_17 : addf (AccMath.accVec (rowF fl tab (wL L).val (2 * t1.val + 1) (2 * k.val + 1)) (offF fl (wL L).val (2 * t1.val + 1) (2 * k.val + 1)) 3 17) (shapeCast S16 (pair1_next.sl.v1733_4 d L tab t1 k r g1 g2 hR hin h10) hc16) = AccMath.accVec (rowF fl tab (wL L).val (2 * t1.val + 1) (2 * k.val + 1)) (offF fl (wL L).val (2 * t1.val + 1) (2 * k.val + 1)) 3 18 :=
        acc_step d L fl tab (wL L).val (2 * t1.val + 1) (2 * k.val + 1) 1 _ hRB ⟨17, by decide⟩ ⟨3, by decide⟩ _ rfl _ hw_v1703_4 _ (k1_off94_form ..) _ hc16
      have s_B3_18 : addf (AccMath.accVec (rowF fl tab (wL L).val (2 * t1.val + 1) (2 * k.val + 1)) (offF fl (wL L).val (2 * t1.val + 1) (2 * k.val + 1)) 3 18) (shapeCast S16 (pair1_next.sl.v1769_4 d L tab t1 k r g1 g2 hR hin h10) hc16) = AccMath.accVec (rowF fl tab (wL L).val (2 * t1.val + 1) (2 * k.val + 1)) (offF fl (wL L).val (2 * t1.val + 1) (2 * k.val + 1)) 3 19 :=
        acc_step d L fl tab (wL L).val (2 * t1.val + 1) (2 * k.val + 1) 1 _ hRB ⟨18, by decide⟩ ⟨3, by decide⟩ _ rfl _ hw_v1739_4 _ (k1_off95_form ..) _ hc16
      have s_B3_19 : addf (AccMath.accVec (rowF fl tab (wL L).val (2 * t1.val + 1) (2 * k.val + 1)) (offF fl (wL L).val (2 * t1.val + 1) (2 * k.val + 1)) 3 19) (shapeCast S16 (pair1_next.sl.v1805_4 d L tab t1 k r g1 g2 hR hin h10) hc16) = AccMath.accVec (rowF fl tab (wL L).val (2 * t1.val + 1) (2 * k.val + 1)) (offF fl (wL L).val (2 * t1.val + 1) (2 * k.val + 1)) 3 20 :=
        acc_step d L fl tab (wL L).val (2 * t1.val + 1) (2 * k.val + 1) 1 _ hRB ⟨19, by decide⟩ ⟨3, by decide⟩ _ rfl _ hw_v1775_4 _ (k1_off96_form ..) _ hc16
      have s_B3_20 : addf (AccMath.accVec (rowF fl tab (wL L).val (2 * t1.val + 1) (2 * k.val + 1)) (offF fl (wL L).val (2 * t1.val + 1) (2 * k.val + 1)) 3 20) (shapeCast S16 (pair1_next.sl.v1841_4 d L tab t1 k r g1 g2 hR hin h10) hc16) = AccMath.accVec (rowF fl tab (wL L).val (2 * t1.val + 1) (2 * k.val + 1)) (offF fl (wL L).val (2 * t1.val + 1) (2 * k.val + 1)) 3 21 :=
        acc_step d L fl tab (wL L).val (2 * t1.val + 1) (2 * k.val + 1) 1 _ hRB ⟨20, by decide⟩ ⟨3, by decide⟩ _ rfl _ hw_v1811_4 _ (k1_off97_form ..) _ hc16
      have s_B3_21 : addf (AccMath.accVec (rowF fl tab (wL L).val (2 * t1.val + 1) (2 * k.val + 1)) (offF fl (wL L).val (2 * t1.val + 1) (2 * k.val + 1)) 3 21) (shapeCast S16 (pair1_next.sl.v1877_4 d L tab t1 k r g1 g2 hR hin h10) hc16) = AccMath.accVec (rowF fl tab (wL L).val (2 * t1.val + 1) (2 * k.val + 1)) (offF fl (wL L).val (2 * t1.val + 1) (2 * k.val + 1)) 3 22 :=
        acc_step d L fl tab (wL L).val (2 * t1.val + 1) (2 * k.val + 1) 1 _ hRB ⟨21, by decide⟩ ⟨3, by decide⟩ _ rfl _ hw_v1847_4 _ (k1_off98_form ..) _ hc16
      have s_B3_22 : addf (AccMath.accVec (rowF fl tab (wL L).val (2 * t1.val + 1) (2 * k.val + 1)) (offF fl (wL L).val (2 * t1.val + 1) (2 * k.val + 1)) 3 22) (shapeCast S16 (pair1_next.sl.v1913_4 d L tab t1 k r g1 g2 hR hin h10) hc16) = AccMath.accVec (rowF fl tab (wL L).val (2 * t1.val + 1) (2 * k.val + 1)) (offF fl (wL L).val (2 * t1.val + 1) (2 * k.val + 1)) 3 23 :=
        acc_step d L fl tab (wL L).val (2 * t1.val + 1) (2 * k.val + 1) 1 _ hRB ⟨22, by decide⟩ ⟨3, by decide⟩ _ rfl _ hw_v1883_4 _ (k1_off99_form ..) _ hc16
      have s_B3_23 : addf (AccMath.accVec (rowF fl tab (wL L).val (2 * t1.val + 1) (2 * k.val + 1)) (offF fl (wL L).val (2 * t1.val + 1) (2 * k.val + 1)) 3 23) (shapeCast S16 (pair1_next.sl.v1949_4 d L tab t1 k r g1 g2 hR hin h10) hc16) = AccMath.accVec (rowF fl tab (wL L).val (2 * t1.val + 1) (2 * k.val + 1)) (offF fl (wL L).val (2 * t1.val + 1) (2 * k.val + 1)) 3 24 :=
        acc_step d L fl tab (wL L).val (2 * t1.val + 1) (2 * k.val + 1) 1 _ hRB ⟨23, by decide⟩ ⟨3, by decide⟩ _ rfl _ hw_v1919_4 _ (k1_off100_form ..) _ hc16
      have s_B3_24 : addf (AccMath.accVec (rowF fl tab (wL L).val (2 * t1.val + 1) (2 * k.val + 1)) (offF fl (wL L).val (2 * t1.val + 1) (2 * k.val + 1)) 3 24) (shapeCast S16 (pair1_next.sl.v1985_4 d L tab t1 k r g1 g2 hR hin h10) hc16) = AccMath.accVec (rowF fl tab (wL L).val (2 * t1.val + 1) (2 * k.val + 1)) (offF fl (wL L).val (2 * t1.val + 1) (2 * k.val + 1)) 3 25 :=
        acc_step d L fl tab (wL L).val (2 * t1.val + 1) (2 * k.val + 1) 1 _ hRB ⟨24, by decide⟩ ⟨3, by decide⟩ _ rfl _ hw_v1955_4 _ (k1_off101_form ..) _ hc16
      have s_B3_25 : addf (AccMath.accVec (rowF fl tab (wL L).val (2 * t1.val + 1) (2 * k.val + 1)) (offF fl (wL L).val (2 * t1.val + 1) (2 * k.val + 1)) 3 25) (shapeCast S16 (pair1_next.sl.v2021_4 d L tab t1 k r g1 g2 hR hin h10) hc16) = AccMath.accVec (rowF fl tab (wL L).val (2 * t1.val + 1) (2 * k.val + 1)) (offF fl (wL L).val (2 * t1.val + 1) (2 * k.val + 1)) 3 26 :=
        acc_step d L fl tab (wL L).val (2 * t1.val + 1) (2 * k.val + 1) 1 _ hRB ⟨25, by decide⟩ ⟨3, by decide⟩ _ rfl _ hw_v1991_4 _ (k1_off102_form ..) _ hc16
      have s_B3_26 : addf (AccMath.accVec (rowF fl tab (wL L).val (2 * t1.val + 1) (2 * k.val + 1)) (offF fl (wL L).val (2 * t1.val + 1) (2 * k.val + 1)) 3 26) (shapeCast S16 (pair1_next.sl.v2057_4 d L tab t1 k r g1 g2 hR hin h10) hc16) = AccMath.accVec (rowF fl tab (wL L).val (2 * t1.val + 1) (2 * k.val + 1)) (offF fl (wL L).val (2 * t1.val + 1) (2 * k.val + 1)) 3 27 :=
        acc_step d L fl tab (wL L).val (2 * t1.val + 1) (2 * k.val + 1) 1 _ hRB ⟨26, by decide⟩ ⟨3, by decide⟩ _ rfl _ hw_v2027_4 _ (k1_off103_form ..) _ hc16
      have s_B3_27 : addf (AccMath.accVec (rowF fl tab (wL L).val (2 * t1.val + 1) (2 * k.val + 1)) (offF fl (wL L).val (2 * t1.val + 1) (2 * k.val + 1)) 3 27) (shapeCast S16 (pair1_next.sl.v2093_4 d L tab t1 k r g1 g2 hR hin h10) hc16) = AccMath.accVec (rowF fl tab (wL L).val (2 * t1.val + 1) (2 * k.val + 1)) (offF fl (wL L).val (2 * t1.val + 1) (2 * k.val + 1)) 3 28 :=
        acc_step d L fl tab (wL L).val (2 * t1.val + 1) (2 * k.val + 1) 1 _ hRB ⟨27, by decide⟩ ⟨3, by decide⟩ _ rfl _ hw_v2063_4 _ (k1_off104_form ..) _ hc16
      have s_B3_28 : addf (AccMath.accVec (rowF fl tab (wL L).val (2 * t1.val + 1) (2 * k.val + 1)) (offF fl (wL L).val (2 * t1.val + 1) (2 * k.val + 1)) 3 28) (shapeCast S16 (pair1_next.sl.v2129_4 d L tab t1 k r g1 g2 hR hin h10) hc16) = AccMath.accVec (rowF fl tab (wL L).val (2 * t1.val + 1) (2 * k.val + 1)) (offF fl (wL L).val (2 * t1.val + 1) (2 * k.val + 1)) 3 29 :=
        acc_step d L fl tab (wL L).val (2 * t1.val + 1) (2 * k.val + 1) 1 _ hRB ⟨28, by decide⟩ ⟨3, by decide⟩ _ rfl _ hw_v2099_4 _ (k1_off105_form ..) _ hc16
      have s_B3_29 : addf (AccMath.accVec (rowF fl tab (wL L).val (2 * t1.val + 1) (2 * k.val + 1)) (offF fl (wL L).val (2 * t1.val + 1) (2 * k.val + 1)) 3 29) (shapeCast S16 (pair1_next.sl.v2165_4 d L tab t1 k r g1 g2 hR hin h10) hc16) = AccMath.accVec (rowF fl tab (wL L).val (2 * t1.val + 1) (2 * k.val + 1)) (offF fl (wL L).val (2 * t1.val + 1) (2 * k.val + 1)) 3 30 :=
        acc_step d L fl tab (wL L).val (2 * t1.val + 1) (2 * k.val + 1) 1 _ hRB ⟨29, by decide⟩ ⟨3, by decide⟩ _ rfl _ hw_v2135_4 _ (k1_off106_form ..) _ hc16
      have s_B3_30 : addf (AccMath.accVec (rowF fl tab (wL L).val (2 * t1.val + 1) (2 * k.val + 1)) (offF fl (wL L).val (2 * t1.val + 1) (2 * k.val + 1)) 3 30) (shapeCast S16 (pair1_next.sl.v2201_4 d L tab t1 k r g1 g2 hR hin h10) hc16) = AccMath.accVec (rowF fl tab (wL L).val (2 * t1.val + 1) (2 * k.val + 1)) (offF fl (wL L).val (2 * t1.val + 1) (2 * k.val + 1)) 3 31 :=
        acc_step d L fl tab (wL L).val (2 * t1.val + 1) (2 * k.val + 1) 1 _ hRB ⟨30, by decide⟩ ⟨3, by decide⟩ _ rfl _ hw_v2171_4 _ (k1_off107_form ..) _ hc16
      have s_B3_31 : addf (AccMath.accVec (rowF fl tab (wL L).val (2 * t1.val + 1) (2 * k.val + 1)) (offF fl (wL L).val (2 * t1.val + 1) (2 * k.val + 1)) 3 31) (shapeCast S16 (pair1_next.sl.v2237_4 d L tab t1 k r g1 g2 hR hin h10) hc16) = AccMath.accVec (rowF fl tab (wL L).val (2 * t1.val + 1) (2 * k.val + 1)) (offF fl (wL L).val (2 * t1.val + 1) (2 * k.val + 1)) 3 32 :=
        acc_step d L fl tab (wL L).val (2 * t1.val + 1) (2 * k.val + 1) 1 _ hRB ⟨31, by decide⟩ ⟨3, by decide⟩ _ rfl _ hw_v2207_4 _ (k1_off108_form ..) _ hc16
      have s_B3_32 : addf (AccMath.accVec (rowF fl tab (wL L).val (2 * t1.val + 1) (2 * k.val + 1)) (offF fl (wL L).val (2 * t1.val + 1) (2 * k.val + 1)) 3 32) (shapeCast S16 (pair1_next.sl.v1697_5 d L tab t1 k r g1 g2 hR hin h10) hc16) = AccMath.accVec (rowF fl tab (wL L).val (2 * t1.val + 1) (2 * k.val + 1)) (offF fl (wL L).val (2 * t1.val + 1) (2 * k.val + 1)) 3 33 :=
        acc_step d L fl tab (wL L).val (2 * t1.val + 1) (2 * k.val + 1) 1 _ hRB ⟨32, by decide⟩ ⟨3, by decide⟩ _ rfl _ hw_v1667_5 _ (k1_off93_form ..) _ hc16
      have s_B3_33 : addf (AccMath.accVec (rowF fl tab (wL L).val (2 * t1.val + 1) (2 * k.val + 1)) (offF fl (wL L).val (2 * t1.val + 1) (2 * k.val + 1)) 3 33) (shapeCast S16 (pair1_next.sl.v1733_5 d L tab t1 k r g1 g2 hR hin h10) hc16) = AccMath.accVec (rowF fl tab (wL L).val (2 * t1.val + 1) (2 * k.val + 1)) (offF fl (wL L).val (2 * t1.val + 1) (2 * k.val + 1)) 3 34 :=
        acc_step d L fl tab (wL L).val (2 * t1.val + 1) (2 * k.val + 1) 1 _ hRB ⟨33, by decide⟩ ⟨3, by decide⟩ _ rfl _ hw_v1703_5 _ (k1_off94_form ..) _ hc16
      have s_B3_34 : addf (AccMath.accVec (rowF fl tab (wL L).val (2 * t1.val + 1) (2 * k.val + 1)) (offF fl (wL L).val (2 * t1.val + 1) (2 * k.val + 1)) 3 34) (shapeCast S16 (pair1_next.sl.v1769_5 d L tab t1 k r g1 g2 hR hin h10) hc16) = AccMath.accVec (rowF fl tab (wL L).val (2 * t1.val + 1) (2 * k.val + 1)) (offF fl (wL L).val (2 * t1.val + 1) (2 * k.val + 1)) 3 35 :=
        acc_step d L fl tab (wL L).val (2 * t1.val + 1) (2 * k.val + 1) 1 _ hRB ⟨34, by decide⟩ ⟨3, by decide⟩ _ rfl _ hw_v1739_5 _ (k1_off95_form ..) _ hc16
      have s_B3_35 : addf (AccMath.accVec (rowF fl tab (wL L).val (2 * t1.val + 1) (2 * k.val + 1)) (offF fl (wL L).val (2 * t1.val + 1) (2 * k.val + 1)) 3 35) (shapeCast S16 (pair1_next.sl.v1805_5 d L tab t1 k r g1 g2 hR hin h10) hc16) = AccMath.accVec (rowF fl tab (wL L).val (2 * t1.val + 1) (2 * k.val + 1)) (offF fl (wL L).val (2 * t1.val + 1) (2 * k.val + 1)) 3 36 :=
        acc_step d L fl tab (wL L).val (2 * t1.val + 1) (2 * k.val + 1) 1 _ hRB ⟨35, by decide⟩ ⟨3, by decide⟩ _ rfl _ hw_v1775_5 _ (k1_off96_form ..) _ hc16
      have s_B3_36 : addf (AccMath.accVec (rowF fl tab (wL L).val (2 * t1.val + 1) (2 * k.val + 1)) (offF fl (wL L).val (2 * t1.val + 1) (2 * k.val + 1)) 3 36) (shapeCast S16 (pair1_next.sl.v1841_5 d L tab t1 k r g1 g2 hR hin h10) hc16) = AccMath.accVec (rowF fl tab (wL L).val (2 * t1.val + 1) (2 * k.val + 1)) (offF fl (wL L).val (2 * t1.val + 1) (2 * k.val + 1)) 3 37 :=
        acc_step d L fl tab (wL L).val (2 * t1.val + 1) (2 * k.val + 1) 1 _ hRB ⟨36, by decide⟩ ⟨3, by decide⟩ _ rfl _ hw_v1811_5 _ (k1_off97_form ..) _ hc16
      have s_B3_37 : addf (AccMath.accVec (rowF fl tab (wL L).val (2 * t1.val + 1) (2 * k.val + 1)) (offF fl (wL L).val (2 * t1.val + 1) (2 * k.val + 1)) 3 37) (shapeCast S16 (pair1_next.sl.v1877_5 d L tab t1 k r g1 g2 hR hin h10) hc16) = AccMath.accVec (rowF fl tab (wL L).val (2 * t1.val + 1) (2 * k.val + 1)) (offF fl (wL L).val (2 * t1.val + 1) (2 * k.val + 1)) 3 38 :=
        acc_step d L fl tab (wL L).val (2 * t1.val + 1) (2 * k.val + 1) 1 _ hRB ⟨37, by decide⟩ ⟨3, by decide⟩ _ rfl _ hw_v1847_5 _ (k1_off98_form ..) _ hc16
      have s_B3_38 : addf (AccMath.accVec (rowF fl tab (wL L).val (2 * t1.val + 1) (2 * k.val + 1)) (offF fl (wL L).val (2 * t1.val + 1) (2 * k.val + 1)) 3 38) (shapeCast S16 (pair1_next.sl.v1913_5 d L tab t1 k r g1 g2 hR hin h10) hc16) = AccMath.accVec (rowF fl tab (wL L).val (2 * t1.val + 1) (2 * k.val + 1)) (offF fl (wL L).val (2 * t1.val + 1) (2 * k.val + 1)) 3 39 :=
        acc_step d L fl tab (wL L).val (2 * t1.val + 1) (2 * k.val + 1) 1 _ hRB ⟨38, by decide⟩ ⟨3, by decide⟩ _ rfl _ hw_v1883_5 _ (k1_off99_form ..) _ hc16
      have s_B3_39 : addf (AccMath.accVec (rowF fl tab (wL L).val (2 * t1.val + 1) (2 * k.val + 1)) (offF fl (wL L).val (2 * t1.val + 1) (2 * k.val + 1)) 3 39) (shapeCast S16 (pair1_next.sl.v1949_5 d L tab t1 k r g1 g2 hR hin h10) hc16) = AccMath.accVec (rowF fl tab (wL L).val (2 * t1.val + 1) (2 * k.val + 1)) (offF fl (wL L).val (2 * t1.val + 1) (2 * k.val + 1)) 3 40 :=
        acc_step d L fl tab (wL L).val (2 * t1.val + 1) (2 * k.val + 1) 1 _ hRB ⟨39, by decide⟩ ⟨3, by decide⟩ _ rfl _ hw_v1919_5 _ (k1_off100_form ..) _ hc16
      have s_B3_40 : addf (AccMath.accVec (rowF fl tab (wL L).val (2 * t1.val + 1) (2 * k.val + 1)) (offF fl (wL L).val (2 * t1.val + 1) (2 * k.val + 1)) 3 40) (shapeCast S16 (pair1_next.sl.v1985_5 d L tab t1 k r g1 g2 hR hin h10) hc16) = AccMath.accVec (rowF fl tab (wL L).val (2 * t1.val + 1) (2 * k.val + 1)) (offF fl (wL L).val (2 * t1.val + 1) (2 * k.val + 1)) 3 41 :=
        acc_step d L fl tab (wL L).val (2 * t1.val + 1) (2 * k.val + 1) 1 _ hRB ⟨40, by decide⟩ ⟨3, by decide⟩ _ rfl _ hw_v1955_5 _ (k1_off101_form ..) _ hc16
      have s_B3_41 : addf (AccMath.accVec (rowF fl tab (wL L).val (2 * t1.val + 1) (2 * k.val + 1)) (offF fl (wL L).val (2 * t1.val + 1) (2 * k.val + 1)) 3 41) (shapeCast S16 (pair1_next.sl.v2021_5 d L tab t1 k r g1 g2 hR hin h10) hc16) = AccMath.accVec (rowF fl tab (wL L).val (2 * t1.val + 1) (2 * k.val + 1)) (offF fl (wL L).val (2 * t1.val + 1) (2 * k.val + 1)) 3 42 :=
        acc_step d L fl tab (wL L).val (2 * t1.val + 1) (2 * k.val + 1) 1 _ hRB ⟨41, by decide⟩ ⟨3, by decide⟩ _ rfl _ hw_v1991_5 _ (k1_off102_form ..) _ hc16
      have s_B3_42 : addf (AccMath.accVec (rowF fl tab (wL L).val (2 * t1.val + 1) (2 * k.val + 1)) (offF fl (wL L).val (2 * t1.val + 1) (2 * k.val + 1)) 3 42) (shapeCast S16 (pair1_next.sl.v2057_5 d L tab t1 k r g1 g2 hR hin h10) hc16) = AccMath.accVec (rowF fl tab (wL L).val (2 * t1.val + 1) (2 * k.val + 1)) (offF fl (wL L).val (2 * t1.val + 1) (2 * k.val + 1)) 3 43 :=
        acc_step d L fl tab (wL L).val (2 * t1.val + 1) (2 * k.val + 1) 1 _ hRB ⟨42, by decide⟩ ⟨3, by decide⟩ _ rfl _ hw_v2027_5 _ (k1_off103_form ..) _ hc16
      have s_B3_43 : addf (AccMath.accVec (rowF fl tab (wL L).val (2 * t1.val + 1) (2 * k.val + 1)) (offF fl (wL L).val (2 * t1.val + 1) (2 * k.val + 1)) 3 43) (shapeCast S16 (pair1_next.sl.v2093_5 d L tab t1 k r g1 g2 hR hin h10) hc16) = AccMath.accVec (rowF fl tab (wL L).val (2 * t1.val + 1) (2 * k.val + 1)) (offF fl (wL L).val (2 * t1.val + 1) (2 * k.val + 1)) 3 44 :=
        acc_step d L fl tab (wL L).val (2 * t1.val + 1) (2 * k.val + 1) 1 _ hRB ⟨43, by decide⟩ ⟨3, by decide⟩ _ rfl _ hw_v2063_5 _ (k1_off104_form ..) _ hc16
      have s_B3_44 : addf (AccMath.accVec (rowF fl tab (wL L).val (2 * t1.val + 1) (2 * k.val + 1)) (offF fl (wL L).val (2 * t1.val + 1) (2 * k.val + 1)) 3 44) (shapeCast S16 (pair1_next.sl.v2129_5 d L tab t1 k r g1 g2 hR hin h10) hc16) = AccMath.accVec (rowF fl tab (wL L).val (2 * t1.val + 1) (2 * k.val + 1)) (offF fl (wL L).val (2 * t1.val + 1) (2 * k.val + 1)) 3 45 :=
        acc_step d L fl tab (wL L).val (2 * t1.val + 1) (2 * k.val + 1) 1 _ hRB ⟨44, by decide⟩ ⟨3, by decide⟩ _ rfl _ hw_v2099_5 _ (k1_off105_form ..) _ hc16
      have s_B3_45 : addf (AccMath.accVec (rowF fl tab (wL L).val (2 * t1.val + 1) (2 * k.val + 1)) (offF fl (wL L).val (2 * t1.val + 1) (2 * k.val + 1)) 3 45) (shapeCast S16 (pair1_next.sl.v2165_5 d L tab t1 k r g1 g2 hR hin h10) hc16) = AccMath.accVec (rowF fl tab (wL L).val (2 * t1.val + 1) (2 * k.val + 1)) (offF fl (wL L).val (2 * t1.val + 1) (2 * k.val + 1)) 3 46 :=
        acc_step d L fl tab (wL L).val (2 * t1.val + 1) (2 * k.val + 1) 1 _ hRB ⟨45, by decide⟩ ⟨3, by decide⟩ _ rfl _ hw_v2135_5 _ (k1_off106_form ..) _ hc16
      have s_B3_46 : addf (AccMath.accVec (rowF fl tab (wL L).val (2 * t1.val + 1) (2 * k.val + 1)) (offF fl (wL L).val (2 * t1.val + 1) (2 * k.val + 1)) 3 46) (shapeCast S16 (pair1_next.sl.v2201_5 d L tab t1 k r g1 g2 hR hin h10) hc16) = AccMath.accVec (rowF fl tab (wL L).val (2 * t1.val + 1) (2 * k.val + 1)) (offF fl (wL L).val (2 * t1.val + 1) (2 * k.val + 1)) 3 47 :=
        acc_step d L fl tab (wL L).val (2 * t1.val + 1) (2 * k.val + 1) 1 _ hRB ⟨46, by decide⟩ ⟨3, by decide⟩ _ rfl _ hw_v2171_5 _ (k1_off107_form ..) _ hc16
      have s_B3_47 : addf (AccMath.accVec (rowF fl tab (wL L).val (2 * t1.val + 1) (2 * k.val + 1)) (offF fl (wL L).val (2 * t1.val + 1) (2 * k.val + 1)) 3 47) (shapeCast S16 (pair1_next.sl.v2237_5 d L tab t1 k r g1 g2 hR hin h10) hc16) = AccMath.accVec (rowF fl tab (wL L).val (2 * t1.val + 1) (2 * k.val + 1)) (offF fl (wL L).val (2 * t1.val + 1) (2 * k.val + 1)) 3 48 :=
        acc_step d L fl tab (wL L).val (2 * t1.val + 1) (2 * k.val + 1) 1 _ hRB ⟨47, by decide⟩ ⟨3, by decide⟩ _ rfl _ hw_v2207_5 _ (k1_off108_form ..) _ hc16
      have s_B3_48 : addf (AccMath.accVec (rowF fl tab (wL L).val (2 * t1.val + 1) (2 * k.val + 1)) (offF fl (wL L).val (2 * t1.val + 1) (2 * k.val + 1)) 3 48) (shapeCast S16 (pair1_next.sl.v1602 d L tab t1 k r g1 g2 hR hin h10) hc16) = AccMath.accVec (rowF fl tab (wL L).val (2 * t1.val + 1) (2 * k.val + 1)) (offF fl (wL L).val (2 * t1.val + 1) (2 * k.val + 1)) 3 49 :=
        acc_step d L fl tab (wL L).val (2 * t1.val + 1) (2 * k.val + 1) 1 _ hRB ⟨48, by decide⟩ ⟨3, by decide⟩ _ rfl _ hw_v1572 _ (k1_off110_form ..) _ hc16
      have s_B3_49 : addf (AccMath.accVec (rowF fl tab (wL L).val (2 * t1.val + 1) (2 * k.val + 1)) (offF fl (wL L).val (2 * t1.val + 1) (2 * k.val + 1)) 3 49) (shapeCast S16 (pair1_next.sl.v1636 d L tab t1 k r g1 g2 hR hin h10) hc16) = AccMath.accVec (rowF fl tab (wL L).val (2 * t1.val + 1) (2 * k.val + 1)) (offF fl (wL L).val (2 * t1.val + 1) (2 * k.val + 1)) 3 50 :=
        acc_step d L fl tab (wL L).val (2 * t1.val + 1) (2 * k.val + 1) 1 _ hRB ⟨49, by decide⟩ ⟨3, by decide⟩ _ rfl _ hw_v1606 _ (k1_off111_form ..) _ hc16
      have hP_B3 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val + 1)) (offF fl (wL L).val (2 * t1.val + 1) (2 * k.val + 1)) 3 0) (shapeCast S16 (pair1_next.sl.v1697_3 d L tab t1 k r g1 g2 hR hin h10) hc16)) (shapeCast S16 (pair1_next.sl.v1733_3 d L tab t1 k r g1 g2 hR hin h10) hc16)) (shapeCast S16 (pair1_next.sl.v1769_3 d L tab t1 k r g1 g2 hR hin h10) hc16)) (shapeCast S16 (pair1_next.sl.v1805_3 d L tab t1 k r g1 g2 hR hin h10) hc16)) (shapeCast S16 (pair1_next.sl.v1841_3 d L tab t1 k r g1 g2 hR hin h10) hc16)) (shapeCast S16 (pair1_next.sl.v1877_3 d L tab t1 k r g1 g2 hR hin h10) hc16)) (shapeCast S16 (pair1_next.sl.v1913_3 d L tab t1 k r g1 g2 hR hin h10) hc16)) (shapeCast S16 (pair1_next.sl.v1949_3 d L tab t1 k r g1 g2 hR hin h10) hc16)) (shapeCast S16 (pair1_next.sl.v1985_3 d L tab t1 k r g1 g2 hR hin h10) hc16)) (shapeCast S16 (pair1_next.sl.v2021_3 d L tab t1 k r g1 g2 hR hin h10) hc16)) (shapeCast S16 (pair1_next.sl.v2057_3 d L tab t1 k r g1 g2 hR hin h10) hc16)) (shapeCast S16 (pair1_next.sl.v2093_3 d L tab t1 k r g1 g2 hR hin h10) hc16)) (shapeCast S16 (pair1_next.sl.v2129_3 d L tab t1 k r g1 g2 hR hin h10) hc16)) (shapeCast S16 (pair1_next.sl.v2165_3 d L tab t1 k r g1 g2 hR hin h10) hc16)) (shapeCast S16 (pair1_next.sl.v2201_3 d L tab t1 k r g1 g2 hR hin h10) hc16)) (shapeCast S16 (pair1_next.sl.v2237_3 d L tab t1 k r g1 g2 hR hin h10) hc16)) (shapeCast S16 (pair1_next.sl.v1697_4 d L tab t1 k r g1 g2 hR hin h10) hc16)) (shapeCast S16 (pair1_next.sl.v1733_4 d L tab t1 k r g1 g2 hR hin h10) hc16)) (shapeCast S16 (pair1_next.sl.v1769_4 d L tab t1 k r g1 g2 hR hin h10) hc16)) (shapeCast S16 (pair1_next.sl.v1805_4 d L tab t1 k r g1 g2 hR hin h10) hc16)) (shapeCast S16 (pair1_next.sl.v1841_4 d L tab t1 k r g1 g2 hR hin h10) hc16)) (shapeCast S16 (pair1_next.sl.v1877_4 d L tab t1 k r g1 g2 hR hin h10) hc16)) (shapeCast S16 (pair1_next.sl.v1913_4 d L tab t1 k r g1 g2 hR hin h10) hc16)) (shapeCast S16 (pair1_next.sl.v1949_4 d L tab t1 k r g1 g2 hR hin h10) hc16)) (shapeCast S16 (pair1_next.sl.v1985_4 d L tab t1 k r g1 g2 hR hin h10) hc16)) (shapeCast S16 (pair1_next.sl.v2021_4 d L tab t1 k r g1 g2 hR hin h10) hc16)) (shapeCast S16 (pair1_next.sl.v2057_4 d L tab t1 k r g1 g2 hR hin h10) hc16)) (shapeCast S16 (pair1_next.sl.v2093_4 d L tab t1 k r g1 g2 hR hin h10) hc16)) (shapeCast S16 (pair1_next.sl.v2129_4 d L tab t1 k r g1 g2 hR hin h10) hc16)) (shapeCast S16 (pair1_next.sl.v2165_4 d L tab t1 k r g1 g2 hR hin h10) hc16)) (shapeCast S16 (pair1_next.sl.v2201_4 d L tab t1 k r g1 g2 hR hin h10) hc16)) (shapeCast S16 (pair1_next.sl.v2237_4 d L tab t1 k r g1 g2 hR hin h10) hc16)) (shapeCast S16 (pair1_next.sl.v1697_5 d L tab t1 k r g1 g2 hR hin h10) hc16)) (shapeCast S16 (pair1_next.sl.v1733_5 d L tab t1 k r g1 g2 hR hin h10) hc16)) (shapeCast S16 (pair1_next.sl.v1769_5 d L tab t1 k r g1 g2 hR hin h10) hc16)) (shapeCast S16 (pair1_next.sl.v1805_5 d L tab t1 k r g1 g2 hR hin h10) hc16)) (shapeCast S16 (pair1_next.sl.v1841_5 d L tab t1 k r g1 g2 hR hin h10) hc16)) (shapeCast S16 (pair1_next.sl.v1877_5 d L tab t1 k r g1 g2 hR hin h10) hc16)) (shapeCast S16 (pair1_next.sl.v1913_5 d L tab t1 k r g1 g2 hR hin h10) hc16)) (shapeCast S16 (pair1_next.sl.v1949_5 d L tab t1 k r g1 g2 hR hin h10) hc16)) (shapeCast S16 (pair1_next.sl.v1985_5 d L tab t1 k r g1 g2 hR hin h10) hc16)) (shapeCast S16 (pair1_next.sl.v2021_5 d L tab t1 k r g1 g2 hR hin h10) hc16)) (shapeCast S16 (pair1_next.sl.v2057_5 d L tab t1 k r g1 g2 hR hin h10) hc16)) (shapeCast S16 (pair1_next.sl.v2093_5 d L tab t1 k r g1 g2 hR hin h10) hc16)) (shapeCast S16 (pair1_next.sl.v2129_5 d L tab t1 k r g1 g2 hR hin h10) hc16)) (shapeCast S16 (pair1_next.sl.v2165_5 d L tab t1 k r g1 g2 hR hin h10) hc16)) (shapeCast S16 (pair1_next.sl.v2201_5 d L tab t1 k r g1 g2 hR hin h10) hc16)) (shapeCast S16 (pair1_next.sl.v2237_5 d L tab t1 k r g1 g2 hR hin h10) hc16)) (shapeCast S16 (pair1_next.sl.v1602 d L tab t1 k r g1 g2 hR hin h10) hc16)) (shapeCast S16 (pair1_next.sl.v1636 d L tab t1 k r g1 g2 hR hin h10) hc16)) hc1 x = Spec.bagPartial fl tab (128 * (wL L).val + 16 * (2 * t1.val + 1) + (2 * k.val + 1)) (16 * 3 + (x 2).val) 50 := fun x => by
        rw [s_B3_0, s_B3_1, s_B3_2, s_B3_3, s_B3_4, s_B3_5, s_B3_6, s_B3_7, s_B3_8, s_B3_9, s_B3_10, s_B3_11, s_B3_12, s_B3_13, s_B3_14, s_B3_15, s_B3_16, s_B3_17, s_B3_18, s_B3_19, s_B3_20, s_B3_21, s_B3_22, s_B3_23, s_B3_24, s_B3_25, s_B3_26, s_B3_27, s_B3_28, s_B3_29, s_B3_30, s_B3_31, s_B3_32, s_B3_33, s_B3_34, s_B3_35, s_B3_36, s_B3_37, s_B3_38, s_B3_39, s_B3_40, s_B3_41, s_B3_42, s_B3_43, s_B3_44, s_B3_45, s_B3_46, s_B3_47, s_B3_48, s_B3_49]
        exact payload_ok fl tab (wL L).val (2 * t1.val + 1) (2 * k.val + 1) ⟨3, by decide⟩ hc1 x
      have hK0 := (WbV_iff_WbK d L fl tab (wL L).val (2 * t1.val + 1) 1 (2 * k.val) wb).mp hwb
      have kA := WbK_bag d L fl tab (wL L).val (2 * t1.val + 1) 1 _ wb hK0 ⟨2 * k.val, by omega⟩ (k1_off85 k) (k1_off86 k) (k1_off87 k) (k1_off88 k)
        (k1_off85_eq k) (k1_off86_eq k) (k1_off87_eq k) (k1_off88_eq k) (k1_off85_inb k) (k1_off86_inb k) (k1_off87_inb k) (k1_off88_inb k) _ _ _ _
        hP_A0 hP_A1 hP_A2 hP_A3
      have kB := WbK_bag d L fl tab (wL L).val (2 * t1.val + 1) 1 _ _ kA ⟨2 * k.val + 1, by omega⟩ (k1_off112 k) (k1_off113 k) (k1_off114 k) (k1_off115 k)
        (k1_off112_eq k) (k1_off113_eq k) (k1_off114_eq k) (k1_off115_eq k) (k1_off112_inb k) (k1_off113_inb k) (k1_off114_inb k) (k1_off115_inb k) _ _ _ _
        hP_B0 hP_B1 hP_B2 hP_B3
      rw [WbV_iff_WbK]
      intro g c hg
      have hg2 : g.val < 2 * (k.val + 1) := hg
      refine kB g c ?_
      have hg' : g.val < 2 * k.val ∨ g.val = 2 * k.val ∨ g.val = 2 * k.val + 1 := by omega
      rcases hg' with h | h | h
      · exact .inl (.inl h)
      · exact .inl (.inr (Fin.ext h))
      · exact .inr (Fin.ext h)

end Tile

end Cert.Proof.BagB
end
-- ==== Proof.TilePair1cB.lean ====
/-
  One trip of an odd block's pair loop on a vector subcore, the last trip (`k = 7`) of the task's last block (`t1 = 3`): from what holds before trip `k`
  to the state with nothing in flight.

  The trip waits for the gather of bag `2 k` into slot 0, starts the gather of bag `2 k + 1` into slot 1 (its list in the second
  half of the row-number scratch), sums bag `2 k`'s fifty rows into row `2 k` of slot 1 of the write-back scratch, waits for the
  second gather, starts nothing more, and sums bag `2 k + 1` into row `2 k + 1`. Each accumulator,
  fifty rows on, is the bag's partial sum of fifty terms at its sixteen columns: row by row, a sixteen-lane load of the
  gathered row at its column offset adds the row's term.
-/
import proofs.«203835_g19404662243951_cont_8to1_399_35_alg».proof.Proof.TilePreB
import proofs.«203835_g19404662243951_cont_8to1_399_35_alg».proof.Proof.PayB
import proofs.«203835_g19404662243951_cont_8to1_399_35_alg».proof.Proof.TileChkB
import proofs.«203835_g19404662243951_cont_8to1_399_35_alg».proof.Proof.TileMath
import proofs.«203835_g19404662243951_cont_8to1_399_35_alg».proof.Proof.TileInvB
import proofs.«203835_g19404662243951_cont_8to1_399_35_alg».proof.Proof.TileInv1B
import proofs.«203835_g19404662243951_cont_8to1_399_35_alg».proof.Proof.Gen.Kernel.Skeleton
import proofs.«203835_g19404662243951_cont_8to1_399_35_alg».proof.Proof.TilePairValB
import proofs.«203835_g19404662243951_cont_8to1_399_35_alg».proof.Proof.TileChk1B
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

set_option maxHeartbeats 0 in
theorem pair1_last (fl : IVec Spec.SFlat 32) (qt : PosShare TreeShare) (tab : FVec F Spec.STab .f32) (O : CellTallies nD τ sig (HIx 1))
    (W0 : Waits sig (HIx 1)) (t1 : Fin k1_t1_loop.trips) (v1407 : BitVec 32) (k : Fin k1_t5_loop.trips) (hk : ¬ k.val < 7) (ht : ¬ t1.val < 3) :
    invF d L fl qt tab O W0 (2 * t1.val + 1) k.val ⟨⟩
      ⊢ wp frame (wpE (defs₀ (F := F)) 𝒱₀ (thr d L) none) Set.univ
          (k1_t5_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10 t1 v1407 k ⟨⟩)
          (invL d L fl qt tab O W0 (2 * t1.val + 1)) := by
  unfold k1_t5_body
  unfold invF invL
  iintro ⟨#Hmw', %r, %g1, %g2, %wb, %o, %ho, ⟨%hT, %hR, %ho_eq, %hV⟩, Hg0, H1, Ht, H3, H2, H4, Hg1, %W', %hW', HO⟩
  have hin := hin_of d L g1 hT
  have h9 := cond9_ge k hk
  have h10 := cond10_ge_ge t1 k hk ht
  sl_exec_parts (disch := first | decide | (chk_disch1; exact hR _))
  sl_unroll
  sl_exec_parts (disch := first | decide | (chk_disch1; exact hR _))
  sl_unroll
  sl_exec_parts (disch := first | decide | (chk_disch1; exact hR _))
  sl_step
  isplitl []; · iexact Hmw'
  iexists _; iexists g1; iexists g2; iexists _
  isplitr; rotate_left
  · isplitl [Hg0]; · iexact Hg0
    isplitl [H1]; · iexact H1
    isplitl [Ht]; · iexact Ht
    isplitl [H3]; · iexact H3
    isplitl [H2]; · iexact H2
    isplitl [H4]; · iexact H4
    isplitl [Hg1]; · iexact Hg1
    iexists (insert (SemLoc.dma cc1_scratch6.sem, (default : HIx 1)) (insert (SemLoc.dma cc1_scratch5.sem, (default : HIx 1)) W')); isplitr
    · ipureintro; intro p hp
      rcases Finset.mem_insert.mp hp with rfl | hp
      · exact .inr rfl
      rcases Finset.mem_insert.mp hp with rfl | hp
      · exact .inr rfl
      · exact hW' p hp
    · iexact HO
  · ipureintro
    refine ⟨hT, hR, ?_⟩
    obtain ⟨hT1, hR1, hnext, hrows, hwb⟩ := hV
    refine ⟨hT1, hR1, hnext, fun h => absurd h (by omega), ?_⟩
    have h8 : k.val < 8 := lt_of_lt_of_eq k.isLt trips5
    have hc16 : S1x1x16.ShapeCasts S16 := by decide
    have hc1 : S16.ShapeCasts S1x1x16 := by decide
    have hRA : RowsV d L fl tab (wL L).val (2 * t1.val + 1) (2 * k.val) 0 (View.write (Elt F) (h1M).view r (pair1_last.sl.gather0 d L tab k g1 hin) Finset.univ) :=
      RowsV_keep0 d L fl tab (wL L).val (2 * t1.val + 1) (2 * k.val) r _ (hrows (Or.inl h8))
    have hwB := words_of_TixV d L fl (wL L).val (2 * t1.val + 1) 1 (2 * k.val + 1) (by decide) (by omega) g1 hT1 (k1_off64 k)
      (by rw [k1_off64_eq]; show 128 * k.val + 1088 = 1024 * 1 + 64 * (2 * k.val + 1); omega)
    have hRB1 : RowsV d L fl tab (wL L).val (2 * t1.val + 1) (2 * k.val + 1) 1 (View.write (Elt F) (h1M).view r (pair1_last.sl.gather0 d L tab k g1 hin) Finset.univ) :=
      RowsV_landing1 d L fl tab (by decide) (wL L).val (2 * t1.val + 1) (2 * k.val + 1) g1 (k1_off64 k) (k1_off64_inb k) hwB (hin _ _) r
    have hRB := hRB1
    have hw_v1667 : pair1_last.sl.v1667 d L k g2 = Spec.tcol (blkWord fl (wL L).val (2 * t1.val + 1) (64 * (2 * k.val) + 0)) := by
      refine (rv_extract d L g2 (k1_off65 k ⟨0, by decide⟩) (k1_off65_inb k ⟨0, by decide⟩) (by decide) 0 (by decide) (by decide) (by decide)).trans ?_
      exact rv_word d L fl (wL L).val (2 * t1.val + 1) 1 (2 * k.val) 0 (by decide) (by omega) (by decide) g2 hR1 _
        (by rw [k1_off65_eq]; show 128 * k.val + 16 * 0 + 1024 + 0 = 1024 * 1 + 64 * (2 * k.val) + 0; omega) _
    have hw_v1703 : pair1_last.sl.v1703 d L k g2 = Spec.tcol (blkWord fl (wL L).val (2 * t1.val + 1) (64 * (2 * k.val) + 1)) := by
      refine (rv_extract d L g2 (k1_off65 k ⟨0, by decide⟩) (k1_off65_inb k ⟨0, by decide⟩) (by decide) 1 (by decide) (by decide) (by decide)).trans ?_
      exact rv_word d L fl (wL L).val (2 * t1.val + 1) 1 (2 * k.val) 1 (by decide) (by omega) (by decide) g2 hR1 _
        (by rw [k1_off65_eq]; show 128 * k.val + 16 * 0 + 1024 + 1 = 1024 * 1 + 64 * (2 * k.val) + 1; omega) _
    have hw_v1739 : pair1_last.sl.v1739 d L k g2 = Spec.tcol (blkWord fl (wL L).val (2 * t1.val + 1) (64 * (2 * k.val) + 2)) := by
      refine (rv_extract d L g2 (k1_off65 k ⟨0, by decide⟩) (k1_off65_inb k ⟨0, by decide⟩) (by decide) 2 (by decide) (by decide) (by decide)).trans ?_
      exact rv_word d L fl (wL L).val (2 * t1.val + 1) 1 (2 * k.val) 2 (by decide) (by omega) (by decide) g2 hR1 _
        (by rw [k1_off65_eq]; show 128 * k.val + 16 * 0 + 1024 + 2 = 1024 * 1 + 64 * (2 * k.val) + 2; omega) _
    have hw_v1775 : pair1_last.sl.v1775 d L k g2 = Spec.tcol (blkWord fl (wL L).val (2 * t1.val + 1) (64 * (2 * k.val) + 3)) := by
      refine (rv_extract d L g2 (k1_off65 k ⟨0, by decide⟩) (k1_off65_inb k ⟨0, by decide⟩) (by decide) 3 (by decide) (by decide) (by decide)).trans ?_
      exact rv_word d L fl (wL L).val (2 * t1.val + 1) 1 (2 * k.val) 3 (by decide) (by omega) (by decide) g2 hR1 _
        (by rw [k1_off65_eq]; show 128 * k.val + 16 * 0 + 1024 + 3 = 1024 * 1 + 64 * (2 * k.val) + 3; omega) _
    have hw_v1811 : pair1_last.sl.v1811 d L k g2 = Spec.tcol (blkWord fl (wL L).val (2 * t1.val + 1) (64 * (2 * k.val) + 4)) := by
      refine (rv_extract d L g2 (k1_off65 k ⟨0, by decide⟩) (k1_off65_inb k ⟨0, by decide⟩) (by decide) 4 (by decide) (by decide) (by decide)).trans ?_
      exact rv_word d L fl (wL L).val (2 * t1.val + 1) 1 (2 * k.val) 4 (by decide) (by omega) (by decide) g2 hR1 _
        (by rw [k1_off65_eq]; show 128 * k.val + 16 * 0 + 1024 + 4 = 1024 * 1 + 64 * (2 * k.val) + 4; omega) _
    have hw_v1847 : pair1_last.sl.v1847 d L k g2 = Spec.tcol (blkWord fl (wL L).val (2 * t1.val + 1) (64 * (2 * k.val) + 5)) := by
      refine (rv_extract d L g2 (k1_off65 k ⟨0, by decide⟩) (k1_off65_inb k ⟨0, by decide⟩) (by decide) 5 (by decide) (by decide) (by decide)).trans ?_
      exact rv_word d L fl (wL L).val (2 * t1.val + 1) 1 (2 * k.val) 5 (by decide) (by omega) (by decide) g2 hR1 _
        (by rw [k1_off65_eq]; show 128 * k.val + 16 * 0 + 1024 + 5 = 1024 * 1 + 64 * (2 * k.val) + 5; omega) _
    have hw_v1883 : pair1_last.sl.v1883 d L k g2 = Spec.tcol (blkWord fl (wL L).val (2 * t1.val + 1) (64 * (2 * k.val) + 6)) := by
      refine (rv_extract d L g2 (k1_off65 k ⟨0, by decide⟩) (k1_off65_inb k ⟨0, by decide⟩) (by decide) 6 (by decide) (by decide) (by decide)).trans ?_
      exact rv_word d L fl (wL L).val (2 * t1.val + 1) 1 (2 * k.val) 6 (by decide) (by omega) (by decide) g2 hR1 _
        (by rw [k1_off65_eq]; show 128 * k.val + 16 * 0 + 1024 + 6 = 1024 * 1 + 64 * (2 * k.val) + 6; omega) _
    have hw_v1919 : pair1_last.sl.v1919 d L k g2 = Spec.tcol (blkWord fl (wL L).val (2 * t1.val + 1) (64 * (2 * k.val) + 7)) := by
      refine (rv_extract d L g2 (k1_off65 k ⟨0, by decide⟩) (k1_off65_inb k ⟨0, by decide⟩) (by decide) 7 (by decide) (by decide) (by decide)).trans ?_
      exact rv_word d L fl (wL L).val (2 * t1.val + 1) 1 (2 * k.val) 7 (by decide) (by omega) (by decide) g2 hR1 _
        (by rw [k1_off65_eq]; show 128 * k.val + 16 * 0 + 1024 + 7 = 1024 * 1 + 64 * (2 * k.val) + 7; omega) _
    have hw_v1955 : pair1_last.sl.v1955 d L k g2 = Spec.tcol (blkWord fl (wL L).val (2 * t1.val + 1) (64 * (2 * k.val) + 8)) := by
      refine (rv_extract d L g2 (k1_off65 k ⟨0, by decide⟩) (k1_off65_inb k ⟨0, by decide⟩) (by decide) 8 (by decide) (by decide) (by decide)).trans ?_
      exact rv_word d L fl (wL L).val (2 * t1.val + 1) 1 (2 * k.val) 8 (by decide) (by omega) (by decide) g2 hR1 _
        (by rw [k1_off65_eq]; show 128 * k.val + 16 * 0 + 1024 + 8 = 1024 * 1 + 64 * (2 * k.val) + 8; omega) _
    have hw_v1991 : pair1_last.sl.v1991 d L k g2 = Spec.tcol (blkWord fl (wL L).val (2 * t1.val + 1) (64 * (2 * k.val) + 9)) := by
      refine (rv_extract d L g2 (k1_off65 k ⟨0, by decide⟩) (k1_off65_inb k ⟨0, by decide⟩) (by decide) 9 (by decide) (by decide) (by decide)).trans ?_
      exact rv_word d L fl (wL L).val (2 * t1.val + 1) 1 (2 * k.val) 9 (by decide) (by omega) (by decide) g2 hR1 _
        (by rw [k1_off65_eq]; show 128 * k.val + 16 * 0 + 1024 + 9 = 1024 * 1 + 64 * (2 * k.val) + 9; omega) _
    have hw_v2027 : pair1_last.sl.v2027 d L k g2 = Spec.tcol (blkWord fl (wL L).val (2 * t1.val + 1) (64 * (2 * k.val) + 10)) := by
      refine (rv_extract d L g2 (k1_off65 k ⟨0, by decide⟩) (k1_off65_inb k ⟨0, by decide⟩) (by decide) 10 (by decide) (by decide) (by decide)).trans ?_
      exact rv_word d L fl (wL L).val (2 * t1.val + 1) 1 (2 * k.val) 10 (by decide) (by omega) (by decide) g2 hR1 _
        (by rw [k1_off65_eq]; show 128 * k.val + 16 * 0 + 1024 + 10 = 1024 * 1 + 64 * (2 * k.val) + 10; omega) _
    have hw_v2063 : pair1_last.sl.v2063 d L k g2 = Spec.tcol (blkWord fl (wL L).val (2 * t1.val + 1) (64 * (2 * k.val) + 11)) := by
      refine (rv_extract d L g2 (k1_off65 k ⟨0, by decide⟩) (k1_off65_inb k ⟨0, by decide⟩) (by decide) 11 (by decide) (by decide) (by decide)).trans ?_
      exact rv_word d L fl (wL L).val (2 * t1.val + 1) 1 (2 * k.val) 11 (by decide) (by omega) (by decide) g2 hR1 _
        (by rw [k1_off65_eq]; show 128 * k.val + 16 * 0 + 1024 + 11 = 1024 * 1 + 64 * (2 * k.val) + 11; omega) _
    have hw_v2099 : pair1_last.sl.v2099 d L k g2 = Spec.tcol (blkWord fl (wL L).val (2 * t1.val + 1) (64 * (2 * k.val) + 12)) := by
      refine (rv_extract d L g2 (k1_off65 k ⟨0, by decide⟩) (k1_off65_inb k ⟨0, by decide⟩) (by decide) 12 (by decide) (by decide) (by decide)).trans ?_
      exact rv_word d L fl (wL L).val (2 * t1.val + 1) 1 (2 * k.val) 12 (by decide) (by omega) (by decide) g2 hR1 _
        (by rw [k1_off65_eq]; show 128 * k.val + 16 * 0 + 1024 + 12 = 1024 * 1 + 64 * (2 * k.val) + 12; omega) _
    have hw_v2135 : pair1_last.sl.v2135 d L k g2 = Spec.tcol (blkWord fl (wL L).val (2 * t1.val + 1) (64 * (2 * k.val) + 13)) := by
      refine (rv_extract d L g2 (k1_off65 k ⟨0, by decide⟩) (k1_off65_inb k ⟨0, by decide⟩) (by decide) 13 (by decide) (by decide) (by decide)).trans ?_
      exact rv_word d L fl (wL L).val (2 * t1.val + 1) 1 (2 * k.val) 13 (by decide) (by omega) (by decide) g2 hR1 _
        (by rw [k1_off65_eq]; show 128 * k.val + 16 * 0 + 1024 + 13 = 1024 * 1 + 64 * (2 * k.val) + 13; omega) _
    have hw_v2171 : pair1_last.sl.v2171 d L k g2 = Spec.tcol (blkWord fl (wL L).val (2 * t1.val + 1) (64 * (2 * k.val) + 14)) := by
      refine (rv_extract d L g2 (k1_off65 k ⟨0, by decide⟩) (k1_off65_inb k ⟨0, by decide⟩) (by decide) 14 (by decide) (by decide) (by decide)).trans ?_
      exact rv_word d L fl (wL L).val (2 * t1.val + 1) 1 (2 * k.val) 14 (by decide) (by omega) (by decide) g2 hR1 _
        (by rw [k1_off65_eq]; show 128 * k.val + 16 * 0 + 1024 + 14 = 1024 * 1 + 64 * (2 * k.val) + 14; omega) _
    have hw_v2207 : pair1_last.sl.v2207 d L k g2 = Spec.tcol (blkWord fl (wL L).val (2 * t1.val + 1) (64 * (2 * k.val) + 15)) := by
      refine (rv_extract d L g2 (k1_off65 k ⟨0, by decide⟩) (k1_off65_inb k ⟨0, by decide⟩) (by decide) 15 (by decide) (by decide) (by decide)).trans ?_
      exact rv_word d L fl (wL L).val (2 * t1.val + 1) 1 (2 * k.val) 15 (by decide) (by omega) (by decide) g2 hR1 _
        (by rw [k1_off65_eq]; show 128 * k.val + 16 * 0 + 1024 + 15 = 1024 * 1 + 64 * (2 * k.val) + 15; omega) _
    have hw_v1667_1 : pair1_last.sl.v1667_1 d L k g2 = Spec.tcol (blkWord fl (wL L).val (2 * t1.val + 1) (64 * (2 * k.val) + 16)) := by
      refine (rv_extract d L g2 (k1_off65 k ⟨1, by decide⟩) (k1_off65_inb k ⟨1, by decide⟩) (by decide) 0 (by decide) (by decide) (by decide)).trans ?_
      exact rv_word d L fl (wL L).val (2 * t1.val + 1) 1 (2 * k.val) 16 (by decide) (by omega) (by decide) g2 hR1 _
        (by rw [k1_off65_eq]; show 128 * k.val + 16 * 1 + 1024 + 0 = 1024 * 1 + 64 * (2 * k.val) + 16; omega) _
    have hw_v1703_1 : pair1_last.sl.v1703_1 d L k g2 = Spec.tcol (blkWord fl (wL L).val (2 * t1.val + 1) (64 * (2 * k.val) + 17)) := by
      refine (rv_extract d L g2 (k1_off65 k ⟨1, by decide⟩) (k1_off65_inb k ⟨1, by decide⟩) (by decide) 1 (by decide) (by decide) (by decide)).trans ?_
      exact rv_word d L fl (wL L).val (2 * t1.val + 1) 1 (2 * k.val) 17 (by decide) (by omega) (by decide) g2 hR1 _
        (by rw [k1_off65_eq]; show 128 * k.val + 16 * 1 + 1024 + 1 = 1024 * 1 + 64 * (2 * k.val) + 17; omega) _
    have hw_v1739_1 : pair1_last.sl.v1739_1 d L k g2 = Spec.tcol (blkWord fl (wL L).val (2 * t1.val + 1) (64 * (2 * k.val) + 18)) := by
      refine (rv_extract d L g2 (k1_off65 k ⟨1, by decide⟩) (k1_off65_inb k ⟨1, by decide⟩) (by decide) 2 (by decide) (by decide) (by decide)).trans ?_
      exact rv_word d L fl (wL L).val (2 * t1.val + 1) 1 (2 * k.val) 18 (by decide) (by omega) (by decide) g2 hR1 _
        (by rw [k1_off65_eq]; show 128 * k.val + 16 * 1 + 1024 + 2 = 1024 * 1 + 64 * (2 * k.val) + 18; omega) _
    have hw_v1775_1 : pair1_last.sl.v1775_1 d L k g2 = Spec.tcol (blkWord fl (wL L).val (2 * t1.val + 1) (64 * (2 * k.val) + 19)) := by
      refine (rv_extract d L g2 (k1_off65 k ⟨1, by decide⟩) (k1_off65_inb k ⟨1, by decide⟩) (by decide) 3 (by decide) (by decide) (by decide)).trans ?_
      exact rv_word d L fl (wL L).val (2 * t1.val + 1) 1 (2 * k.val) 19 (by decide) (by omega) (by decide) g2 hR1 _
        (by rw [k1_off65_eq]; show 128 * k.val + 16 * 1 + 1024 + 3 = 1024 * 1 + 64 * (2 * k.val) + 19; omega) _
    have hw_v1811_1 : pair1_last.sl.v1811_1 d L k g2 = Spec.tcol (blkWord fl (wL L).val (2 * t1.val + 1) (64 * (2 * k.val) + 20)) := by
      refine (rv_extract d L g2 (k1_off65 k ⟨1, by decide⟩) (k1_off65_inb k ⟨1, by decide⟩) (by decide) 4 (by decide) (by decide) (by decide)).trans ?_
      exact rv_word d L fl (wL L).val (2 * t1.val + 1) 1 (2 * k.val) 20 (by decide) (by omega) (by decide) g2 hR1 _
        (by rw [k1_off65_eq]; show 128 * k.val + 16 * 1 + 1024 + 4 = 1024 * 1 + 64 * (2 * k.val) + 20; omega) _
    have hw_v1847_1 : pair1_last.sl.v1847_1 d L k g2 = Spec.tcol (blkWord fl (wL L).val (2 * t1.val + 1) (64 * (2 * k.val) + 21)) := by
      refine (rv_extract d L g2 (k1_off65 k ⟨1, by decide⟩) (k1_off65_inb k ⟨1, by decide⟩) (by decide) 5 (by decide) (by decide) (by decide)).trans ?_
      exact rv_word d L fl (wL L).val (2 * t1.val + 1) 1 (2 * k.val) 21 (by decide) (by omega) (by decide) g2 hR1 _
        (by rw [k1_off65_eq]; show 128 * k.val + 16 * 1 + 1024 + 5 = 1024 * 1 + 64 * (2 * k.val) + 21; omega) _
    have hw_v1883_1 : pair1_last.sl.v1883_1 d L k g2 = Spec.tcol (blkWord fl (wL L).val (2 * t1.val + 1) (64 * (2 * k.val) + 22)) := by
      refine (rv_extract d L g2 (k1_off65 k ⟨1, by decide⟩) (k1_off65_inb k ⟨1, by decide⟩) (by decide) 6 (by decide) (by decide) (by decide)).trans ?_
      exact rv_word d L fl (wL L).val (2 * t1.val + 1) 1 (2 * k.val) 22 (by decide) (by omega) (by decide) g2 hR1 _
        (by rw [k1_off65_eq]; show 128 * k.val + 16 * 1 + 1024 + 6 = 1024 * 1 + 64 * (2 * k.val) + 22; omega) _
    have hw_v1919_1 : pair1_last.sl.v1919_1 d L k g2 = Spec.tcol (blkWord fl (wL L).val (2 * t1.val + 1) (64 * (2 * k.val) + 23)) := by
      refine (rv_extract d L g2 (k1_off65 k ⟨1, by decide⟩) (k1_off65_inb k ⟨1, by decide⟩) (by decide) 7 (by decide) (by decide) (by decide)).trans ?_
      exact rv_word d L fl (wL L).val (2 * t1.val + 1) 1 (2 * k.val) 23 (by decide) (by omega) (by decide) g2 hR1 _
        (by rw [k1_off65_eq]; show 128 * k.val + 16 * 1 + 1024 + 7 = 1024 * 1 + 64 * (2 * k.val) + 23; omega) _
    have hw_v1955_1 : pair1_last.sl.v1955_1 d L k g2 = Spec.tcol (blkWord fl (wL L).val (2 * t1.val + 1) (64 * (2 * k.val) + 24)) := by
      refine (rv_extract d L g2 (k1_off65 k ⟨1, by decide⟩) (k1_off65_inb k ⟨1, by decide⟩) (by decide) 8 (by decide) (by decide) (by decide)).trans ?_
      exact rv_word d L fl (wL L).val (2 * t1.val + 1) 1 (2 * k.val) 24 (by decide) (by omega) (by decide) g2 hR1 _
        (by rw [k1_off65_eq]; show 128 * k.val + 16 * 1 + 1024 + 8 = 1024 * 1 + 64 * (2 * k.val) + 24; omega) _
    have hw_v1991_1 : pair1_last.sl.v1991_1 d L k g2 = Spec.tcol (blkWord fl (wL L).val (2 * t1.val + 1) (64 * (2 * k.val) + 25)) := by
      refine (rv_extract d L g2 (k1_off65 k ⟨1, by decide⟩) (k1_off65_inb k ⟨1, by decide⟩) (by decide) 9 (by decide) (by decide) (by decide)).trans ?_
      exact rv_word d L fl (wL L).val (2 * t1.val + 1) 1 (2 * k.val) 25 (by decide) (by omega) (by decide) g2 hR1 _
        (by rw [k1_off65_eq]; show 128 * k.val + 16 * 1 + 1024 + 9 = 1024 * 1 + 64 * (2 * k.val) + 25; omega) _
    have hw_v2027_1 : pair1_last.sl.v2027_1 d L k g2 = Spec.tcol (blkWord fl (wL L).val (2 * t1.val + 1) (64 * (2 * k.val) + 26)) := by
      refine (rv_extract d L g2 (k1_off65 k ⟨1, by decide⟩) (k1_off65_inb k ⟨1, by decide⟩) (by decide) 10 (by decide) (by decide) (by decide)).trans ?_
      exact rv_word d L fl (wL L).val (2 * t1.val + 1) 1 (2 * k.val) 26 (by decide) (by omega) (by decide) g2 hR1 _
        (by rw [k1_off65_eq]; show 128 * k.val + 16 * 1 + 1024 + 10 = 1024 * 1 + 64 * (2 * k.val) + 26; omega) _
    have hw_v2063_1 : pair1_last.sl.v2063_1 d L k g2 = Spec.tcol (blkWord fl (wL L).val (2 * t1.val + 1) (64 * (2 * k.val) + 27)) := by
      refine (rv_extract d L g2 (k1_off65 k ⟨1, by decide⟩) (k1_off65_inb k ⟨1, by decide⟩) (by decide) 11 (by decide) (by decide) (by decide)).trans ?_
      exact rv_word d L fl (wL L).val (2 * t1.val + 1) 1 (2 * k.val) 27 (by decide) (by omega) (by decide) g2 hR1 _
        (by rw [k1_off65_eq]; show 128 * k.val + 16 * 1 + 1024 + 11 = 1024 * 1 + 64 * (2 * k.val) + 27; omega) _
    have hw_v2099_1 : pair1_last.sl.v2099_1 d L k g2 = Spec.tcol (blkWord fl (wL L).val (2 * t1.val + 1) (64 * (2 * k.val) + 28)) := by
      refine (rv_extract d L g2 (k1_off65 k ⟨1, by decide⟩) (k1_off65_inb k ⟨1, by decide⟩) (by decide) 12 (by decide) (by decide) (by decide)).trans ?_
      exact rv_word d L fl (wL L).val (2 * t1.val + 1) 1 (2 * k.val) 28 (by decide) (by omega) (by decide) g2 hR1 _
        (by rw [k1_off65_eq]; show 128 * k.val + 16 * 1 + 1024 + 12 = 1024 * 1 + 64 * (2 * k.val) + 28; omega) _
    have hw_v2135_1 : pair1_last.sl.v2135_1 d L k g2 = Spec.tcol (blkWord fl (wL L).val (2 * t1.val + 1) (64 * (2 * k.val) + 29)) := by
      refine (rv_extract d L g2 (k1_off65 k ⟨1, by decide⟩) (k1_off65_inb k ⟨1, by decide⟩) (by decide) 13 (by decide) (by decide) (by decide)).trans ?_
      exact rv_word d L fl (wL L).val (2 * t1.val + 1) 1 (2 * k.val) 29 (by decide) (by omega) (by decide) g2 hR1 _
        (by rw [k1_off65_eq]; show 128 * k.val + 16 * 1 + 1024 + 13 = 1024 * 1 + 64 * (2 * k.val) + 29; omega) _
    have hw_v2171_1 : pair1_last.sl.v2171_1 d L k g2 = Spec.tcol (blkWord fl (wL L).val (2 * t1.val + 1) (64 * (2 * k.val) + 30)) := by
      refine (rv_extract d L g2 (k1_off65 k ⟨1, by decide⟩) (k1_off65_inb k ⟨1, by decide⟩) (by decide) 14 (by decide) (by decide) (by decide)).trans ?_
      exact rv_word d L fl (wL L).val (2 * t1.val + 1) 1 (2 * k.val) 30 (by decide) (by omega) (by decide) g2 hR1 _
        (by rw [k1_off65_eq]; show 128 * k.val + 16 * 1 + 1024 + 14 = 1024 * 1 + 64 * (2 * k.val) + 30; omega) _
    have hw_v2207_1 : pair1_last.sl.v2207_1 d L k g2 = Spec.tcol (blkWord fl (wL L).val (2 * t1.val + 1) (64 * (2 * k.val) + 31)) := by
      refine (rv_extract d L g2 (k1_off65 k ⟨1, by decide⟩) (k1_off65_inb k ⟨1, by decide⟩) (by decide) 15 (by decide) (by decide) (by decide)).trans ?_
      exact rv_word d L fl (wL L).val (2 * t1.val + 1) 1 (2 * k.val) 31 (by decide) (by omega) (by decide) g2 hR1 _
        (by rw [k1_off65_eq]; show 128 * k.val + 16 * 1 + 1024 + 15 = 1024 * 1 + 64 * (2 * k.val) + 31; omega) _
    have hw_v1667_2 : pair1_last.sl.v1667_2 d L k g2 = Spec.tcol (blkWord fl (wL L).val (2 * t1.val + 1) (64 * (2 * k.val) + 32)) := by
      refine (rv_extract d L g2 (k1_off65 k ⟨2, by decide⟩) (k1_off65_inb k ⟨2, by decide⟩) (by decide) 0 (by decide) (by decide) (by decide)).trans ?_
      exact rv_word d L fl (wL L).val (2 * t1.val + 1) 1 (2 * k.val) 32 (by decide) (by omega) (by decide) g2 hR1 _
        (by rw [k1_off65_eq]; show 128 * k.val + 16 * 2 + 1024 + 0 = 1024 * 1 + 64 * (2 * k.val) + 32; omega) _
    have hw_v1703_2 : pair1_last.sl.v1703_2 d L k g2 = Spec.tcol (blkWord fl (wL L).val (2 * t1.val + 1) (64 * (2 * k.val) + 33)) := by
      refine (rv_extract d L g2 (k1_off65 k ⟨2, by decide⟩) (k1_off65_inb k ⟨2, by decide⟩) (by decide) 1 (by decide) (by decide) (by decide)).trans ?_
      exact rv_word d L fl (wL L).val (2 * t1.val + 1) 1 (2 * k.val) 33 (by decide) (by omega) (by decide) g2 hR1 _
        (by rw [k1_off65_eq]; show 128 * k.val + 16 * 2 + 1024 + 1 = 1024 * 1 + 64 * (2 * k.val) + 33; omega) _
    have hw_v1739_2 : pair1_last.sl.v1739_2 d L k g2 = Spec.tcol (blkWord fl (wL L).val (2 * t1.val + 1) (64 * (2 * k.val) + 34)) := by
      refine (rv_extract d L g2 (k1_off65 k ⟨2, by decide⟩) (k1_off65_inb k ⟨2, by decide⟩) (by decide) 2 (by decide) (by decide) (by decide)).trans ?_
      exact rv_word d L fl (wL L).val (2 * t1.val + 1) 1 (2 * k.val) 34 (by decide) (by omega) (by decide) g2 hR1 _
        (by rw [k1_off65_eq]; show 128 * k.val + 16 * 2 + 1024 + 2 = 1024 * 1 + 64 * (2 * k.val) + 34; omega) _
    have hw_v1775_2 : pair1_last.sl.v1775_2 d L k g2 = Spec.tcol (blkWord fl (wL L).val (2 * t1.val + 1) (64 * (2 * k.val) + 35)) := by
      refine (rv_extract d L g2 (k1_off65 k ⟨2, by decide⟩) (k1_off65_inb k ⟨2, by decide⟩) (by decide) 3 (by decide) (by decide) (by decide)).trans ?_
      exact rv_word d L fl (wL L).val (2 * t1.val + 1) 1 (2 * k.val) 35 (by decide) (by omega) (by decide) g2 hR1 _
        (by rw [k1_off65_eq]; show 128 * k.val + 16 * 2 + 1024 + 3 = 1024 * 1 + 64 * (2 * k.val) + 35; omega) _
    have hw_v1811_2 : pair1_last.sl.v1811_2 d L k g2 = Spec.tcol (blkWord fl (wL L).val (2 * t1.val + 1) (64 * (2 * k.val) + 36)) := by
      refine (rv_extract d L g2 (k1_off65 k ⟨2, by decide⟩) (k1_off65_inb k ⟨2, by decide⟩) (by decide) 4 (by decide) (by decide) (by decide)).trans ?_
      exact rv_word d L fl (wL L).val (2 * t1.val + 1) 1 (2 * k.val) 36 (by decide) (by omega) (by decide) g2 hR1 _
        (by rw [k1_off65_eq]; show 128 * k.val + 16 * 2 + 1024 + 4 = 1024 * 1 + 64 * (2 * k.val) + 36; omega) _
    have hw_v1847_2 : pair1_last.sl.v1847_2 d L k g2 = Spec.tcol (blkWord fl (wL L).val (2 * t1.val + 1) (64 * (2 * k.val) + 37)) := by
      refine (rv_extract d L g2 (k1_off65 k ⟨2, by decide⟩) (k1_off65_inb k ⟨2, by decide⟩) (by decide) 5 (by decide) (by decide) (by decide)).trans ?_
      exact rv_word d L fl (wL L).val (2 * t1.val + 1) 1 (2 * k.val) 37 (by decide) (by omega) (by decide) g2 hR1 _
        (by rw [k1_off65_eq]; show 128 * k.val + 16 * 2 + 1024 + 5 = 1024 * 1 + 64 * (2 * k.val) + 37; omega) _
    have hw_v1883_2 : pair1_last.sl.v1883_2 d L k g2 = Spec.tcol (blkWord fl (wL L).val (2 * t1.val + 1) (64 * (2 * k.val) + 38)) := by
      refine (rv_extract d L g2 (k1_off65 k ⟨2, by decide⟩) (k1_off65_inb k ⟨2, by decide⟩) (by decide) 6 (by decide) (by decide) (by decide)).trans ?_
      exact rv_word d L fl (wL L).val (2 * t1.val + 1) 1 (2 * k.val) 38 (by decide) (by omega) (by decide) g2 hR1 _
        (by rw [k1_off65_eq]; show 128 * k.val + 16 * 2 + 1024 + 6 = 1024 * 1 + 64 * (2 * k.val) + 38; omega) _
    have hw_v1919_2 : pair1_last.sl.v1919_2 d L k g2 = Spec.tcol (blkWord fl (wL L).val (2 * t1.val + 1) (64 * (2 * k.val) + 39)) := by
      refine (rv_extract d L g2 (k1_off65 k ⟨2, by decide⟩) (k1_off65_inb k ⟨2, by decide⟩) (by decide) 7 (by decide) (by decide) (by decide)).trans ?_
      exact rv_word d L fl (wL L).val (2 * t1.val + 1) 1 (2 * k.val) 39 (by decide) (by omega) (by decide) g2 hR1 _
        (by rw [k1_off65_eq]; show 128 * k.val + 16 * 2 + 1024 + 7 = 1024 * 1 + 64 * (2 * k.val) + 39; omega) _
    have hw_v1955_2 : pair1_last.sl.v1955_2 d L k g2 = Spec.tcol (blkWord fl (wL L).val (2 * t1.val + 1) (64 * (2 * k.val) + 40)) := by
      refine (rv_extract d L g2 (k1_off65 k ⟨2, by decide⟩) (k1_off65_inb k ⟨2, by decide⟩) (by decide) 8 (by decide) (by decide) (by decide)).trans ?_
      exact rv_word d L fl (wL L).val (2 * t1.val + 1) 1 (2 * k.val) 40 (by decide) (by omega) (by decide) g2 hR1 _
        (by rw [k1_off65_eq]; show 128 * k.val + 16 * 2 + 1024 + 8 = 1024 * 1 + 64 * (2 * k.val) + 40; omega) _
    have hw_v1991_2 : pair1_last.sl.v1991_2 d L k g2 = Spec.tcol (blkWord fl (wL L).val (2 * t1.val + 1) (64 * (2 * k.val) + 41)) := by
      refine (rv_extract d L g2 (k1_off65 k ⟨2, by decide⟩) (k1_off65_inb k ⟨2, by decide⟩) (by decide) 9 (by decide) (by decide) (by decide)).trans ?_
      exact rv_word d L fl (wL L).val (2 * t1.val + 1) 1 (2 * k.val) 41 (by decide) (by omega) (by decide) g2 hR1 _
        (by rw [k1_off65_eq]; show 128 * k.val + 16 * 2 + 1024 + 9 = 1024 * 1 + 64 * (2 * k.val) + 41; omega) _
    have hw_v2027_2 : pair1_last.sl.v2027_2 d L k g2 = Spec.tcol (blkWord fl (wL L).val (2 * t1.val + 1) (64 * (2 * k.val) + 42)) := by
      refine (rv_extract d L g2 (k1_off65 k ⟨2, by decide⟩) (k1_off65_inb k ⟨2, by decide⟩) (by decide) 10 (by decide) (by decide) (by decide)).trans ?_
      exact rv_word d L fl (wL L).val (2 * t1.val + 1) 1 (2 * k.val) 42 (by decide) (by omega) (by decide) g2 hR1 _
        (by rw [k1_off65_eq]; show 128 * k.val + 16 * 2 + 1024 + 10 = 1024 * 1 + 64 * (2 * k.val) + 42; omega) _
    have hw_v2063_2 : pair1_last.sl.v2063_2 d L k g2 = Spec.tcol (blkWord fl (wL L).val (2 * t1.val + 1) (64 * (2 * k.val) + 43)) := by
      refine (rv_extract d L g2 (k1_off65 k ⟨2, by decide⟩) (k1_off65_inb k ⟨2, by decide⟩) (by decide) 11 (by decide) (by decide) (by decide)).trans ?_
      exact rv_word d L fl (wL L).val (2 * t1.val + 1) 1 (2 * k.val) 43 (by decide) (by omega) (by decide) g2 hR1 _
        (by rw [k1_off65_eq]; show 128 * k.val + 16 * 2 + 1024 + 11 = 1024 * 1 + 64 * (2 * k.val) + 43; omega) _
    have hw_v2099_2 : pair1_last.sl.v2099_2 d L k g2 = Spec.tcol (blkWord fl (wL L).val (2 * t1.val + 1) (64 * (2 * k.val) + 44)) := by
      refine (rv_extract d L g2 (k1_off65 k ⟨2, by decide⟩) (k1_off65_inb k ⟨2, by decide⟩) (by decide) 12 (by decide) (by decide) (by decide)).trans ?_
      exact rv_word d L fl (wL L).val (2 * t1.val + 1) 1 (2 * k.val) 44 (by decide) (by omega) (by decide) g2 hR1 _
        (by rw [k1_off65_eq]; show 128 * k.val + 16 * 2 + 1024 + 12 = 1024 * 1 + 64 * (2 * k.val) + 44; omega) _
    have hw_v2135_2 : pair1_last.sl.v2135_2 d L k g2 = Spec.tcol (blkWord fl (wL L).val (2 * t1.val + 1) (64 * (2 * k.val) + 45)) := by
      refine (rv_extract d L g2 (k1_off65 k ⟨2, by decide⟩) (k1_off65_inb k ⟨2, by decide⟩) (by decide) 13 (by decide) (by decide) (by decide)).trans ?_
      exact rv_word d L fl (wL L).val (2 * t1.val + 1) 1 (2 * k.val) 45 (by decide) (by omega) (by decide) g2 hR1 _
        (by rw [k1_off65_eq]; show 128 * k.val + 16 * 2 + 1024 + 13 = 1024 * 1 + 64 * (2 * k.val) + 45; omega) _
    have hw_v2171_2 : pair1_last.sl.v2171_2 d L k g2 = Spec.tcol (blkWord fl (wL L).val (2 * t1.val + 1) (64 * (2 * k.val) + 46)) := by
      refine (rv_extract d L g2 (k1_off65 k ⟨2, by decide⟩) (k1_off65_inb k ⟨2, by decide⟩) (by decide) 14 (by decide) (by decide) (by decide)).trans ?_
      exact rv_word d L fl (wL L).val (2 * t1.val + 1) 1 (2 * k.val) 46 (by decide) (by omega) (by decide) g2 hR1 _
        (by rw [k1_off65_eq]; show 128 * k.val + 16 * 2 + 1024 + 14 = 1024 * 1 + 64 * (2 * k.val) + 46; omega) _
    have hw_v2207_2 : pair1_last.sl.v2207_2 d L k g2 = Spec.tcol (blkWord fl (wL L).val (2 * t1.val + 1) (64 * (2 * k.val) + 47)) := by
      refine (rv_extract d L g2 (k1_off65 k ⟨2, by decide⟩) (k1_off65_inb k ⟨2, by decide⟩) (by decide) 15 (by decide) (by decide) (by decide)).trans ?_
      exact rv_word d L fl (wL L).val (2 * t1.val + 1) 1 (2 * k.val) 47 (by decide) (by omega) (by decide) g2 hR1 _
        (by rw [k1_off65_eq]; show 128 * k.val + 16 * 2 + 1024 + 15 = 1024 * 1 + 64 * (2 * k.val) + 47; omega) _
    have hw_v1456 : pair1_last.sl.v1456 d L k g2 = Spec.tcol (blkWord fl (wL L).val (2 * t1.val + 1) (64 * (2 * k.val) + 48)) := by
      refine (rv_extract d L g2 (k1_off82 k) (k1_off82_inb k) (by decide) 0 (by decide) (by decide) (by decide)).trans ?_
      exact rv_word d L fl (wL L).val (2 * t1.val + 1) 1 (2 * k.val) 48 (by decide) (by omega) (by decide) g2 hR1 _
        (by rw [k1_off82_eq]; show 128 * k.val + 1072 + 0 = 1024 * 1 + 64 * (2 * k.val) + 48; omega) _
    have hw_v1490 : pair1_last.sl.v1490 d L k g2 = Spec.tcol (blkWord fl (wL L).val (2 * t1.val + 1) (64 * (2 * k.val) + 49)) := by
      refine (rv_extract d L g2 (k1_off82 k) (k1_off82_inb k) (by decide) 1 (by decide) (by decide) (by decide)).trans ?_
      exact rv_word d L fl (wL L).val (2 * t1.val + 1) 1 (2 * k.val) 49 (by decide) (by omega) (by decide) g2 hR1 _
        (by rw [k1_off82_eq]; show 128 * k.val + 1072 + 1 = 1024 * 1 + 64 * (2 * k.val) + 49; omega) _
    have hw_v1667_3 : pair1_last.sl.v1667_3 d L k g2 = Spec.tcol (blkWord fl (wL L).val (2 * t1.val + 1) (64 * (2 * k.val + 1) + 0)) := by
      refine (rv_extract d L g2 (k1_off92 k ⟨0, by decide⟩) (k1_off92_inb k ⟨0, by decide⟩) (by decide) 0 (by decide) (by decide) (by decide)).trans ?_
      exact rv_word d L fl (wL L).val (2 * t1.val + 1) 1 (2 * k.val + 1) 0 (by decide) (by omega) (by decide) g2 hR1 _
        (by rw [k1_off92_eq]; show 128 * k.val + 16 * 0 + 1088 + 0 = 1024 * 1 + 64 * (2 * k.val + 1) + 0; omega) _
    have hw_v1703_3 : pair1_last.sl.v1703_3 d L k g2 = Spec.tcol (blkWord fl (wL L).val (2 * t1.val + 1) (64 * (2 * k.val + 1) + 1)) := by
      refine (rv_extract d L g2 (k1_off92 k ⟨0, by decide⟩) (k1_off92_inb k ⟨0, by decide⟩) (by decide) 1 (by decide) (by decide) (by decide)).trans ?_
      exact rv_word d L fl (wL L).val (2 * t1.val + 1) 1 (2 * k.val + 1) 1 (by decide) (by omega) (by decide) g2 hR1 _
        (by rw [k1_off92_eq]; show 128 * k.val + 16 * 0 + 1088 + 1 = 1024 * 1 + 64 * (2 * k.val + 1) + 1; omega) _
    have hw_v1739_3 : pair1_last.sl.v1739_3 d L k g2 = Spec.tcol (blkWord fl (wL L).val (2 * t1.val + 1) (64 * (2 * k.val + 1) + 2)) := by
      refine (rv_extract d L g2 (k1_off92 k ⟨0, by decide⟩) (k1_off92_inb k ⟨0, by decide⟩) (by decide) 2 (by decide) (by decide) (by decide)).trans ?_
      exact rv_word d L fl (wL L).val (2 * t1.val + 1) 1 (2 * k.val + 1) 2 (by decide) (by omega) (by decide) g2 hR1 _
        (by rw [k1_off92_eq]; show 128 * k.val + 16 * 0 + 1088 + 2 = 1024 * 1 + 64 * (2 * k.val + 1) + 2; omega) _
    have hw_v1775_3 : pair1_last.sl.v1775_3 d L k g2 = Spec.tcol (blkWord fl (wL L).val (2 * t1.val + 1) (64 * (2 * k.val + 1) + 3)) := by
      refine (rv_extract d L g2 (k1_off92 k ⟨0, by decide⟩) (k1_off92_inb k ⟨0, by decide⟩) (by decide) 3 (by decide) (by decide) (by decide)).trans ?_
      exact rv_word d L fl (wL L).val (2 * t1.val + 1) 1 (2 * k.val + 1) 3 (by decide) (by omega) (by decide) g2 hR1 _
        (by rw [k1_off92_eq]; show 128 * k.val + 16 * 0 + 1088 + 3 = 1024 * 1 + 64 * (2 * k.val + 1) + 3; omega) _
    have hw_v1811_3 : pair1_last.sl.v1811_3 d L k g2 = Spec.tcol (blkWord fl (wL L).val (2 * t1.val + 1) (64 * (2 * k.val + 1) + 4)) := by
      refine (rv_extract d L g2 (k1_off92 k ⟨0, by decide⟩) (k1_off92_inb k ⟨0, by decide⟩) (by decide) 4 (by decide) (by decide) (by decide)).trans ?_
      exact rv_word d L fl (wL L).val (2 * t1.val + 1) 1 (2 * k.val + 1) 4 (by decide) (by omega) (by decide) g2 hR1 _
        (by rw [k1_off92_eq]; show 128 * k.val + 16 * 0 + 1088 + 4 = 1024 * 1 + 64 * (2 * k.val + 1) + 4; omega) _
    have hw_v1847_3 : pair1_last.sl.v1847_3 d L k g2 = Spec.tcol (blkWord fl (wL L).val (2 * t1.val + 1) (64 * (2 * k.val + 1) + 5)) := by
      refine (rv_extract d L g2 (k1_off92 k ⟨0, by decide⟩) (k1_off92_inb k ⟨0, by decide⟩) (by decide) 5 (by decide) (by decide) (by decide)).trans ?_
      exact rv_word d L fl (wL L).val (2 * t1.val + 1) 1 (2 * k.val + 1) 5 (by decide) (by omega) (by decide) g2 hR1 _
        (by rw [k1_off92_eq]; show 128 * k.val + 16 * 0 + 1088 + 5 = 1024 * 1 + 64 * (2 * k.val + 1) + 5; omega) _
    have hw_v1883_3 : pair1_last.sl.v1883_3 d L k g2 = Spec.tcol (blkWord fl (wL L).val (2 * t1.val + 1) (64 * (2 * k.val + 1) + 6)) := by
      refine (rv_extract d L g2 (k1_off92 k ⟨0, by decide⟩) (k1_off92_inb k ⟨0, by decide⟩) (by decide) 6 (by decide) (by decide) (by decide)).trans ?_
      exact rv_word d L fl (wL L).val (2 * t1.val + 1) 1 (2 * k.val + 1) 6 (by decide) (by omega) (by decide) g2 hR1 _
        (by rw [k1_off92_eq]; show 128 * k.val + 16 * 0 + 1088 + 6 = 1024 * 1 + 64 * (2 * k.val + 1) + 6; omega) _
    have hw_v1919_3 : pair1_last.sl.v1919_3 d L k g2 = Spec.tcol (blkWord fl (wL L).val (2 * t1.val + 1) (64 * (2 * k.val + 1) + 7)) := by
      refine (rv_extract d L g2 (k1_off92 k ⟨0, by decide⟩) (k1_off92_inb k ⟨0, by decide⟩) (by decide) 7 (by decide) (by decide) (by decide)).trans ?_
      exact rv_word d L fl (wL L).val (2 * t1.val + 1) 1 (2 * k.val + 1) 7 (by decide) (by omega) (by decide) g2 hR1 _
        (by rw [k1_off92_eq]; show 128 * k.val + 16 * 0 + 1088 + 7 = 1024 * 1 + 64 * (2 * k.val + 1) + 7; omega) _
    have hw_v1955_3 : pair1_last.sl.v1955_3 d L k g2 = Spec.tcol (blkWord fl (wL L).val (2 * t1.val + 1) (64 * (2 * k.val + 1) + 8)) := by
      refine (rv_extract d L g2 (k1_off92 k ⟨0, by decide⟩) (k1_off92_inb k ⟨0, by decide⟩) (by decide) 8 (by decide) (by decide) (by decide)).trans ?_
      exact rv_word d L fl (wL L).val (2 * t1.val + 1) 1 (2 * k.val + 1) 8 (by decide) (by omega) (by decide) g2 hR1 _
        (by rw [k1_off92_eq]; show 128 * k.val + 16 * 0 + 1088 + 8 = 1024 * 1 + 64 * (2 * k.val + 1) + 8; omega) _
    have hw_v1991_3 : pair1_last.sl.v1991_3 d L k g2 = Spec.tcol (blkWord fl (wL L).val (2 * t1.val + 1) (64 * (2 * k.val + 1) + 9)) := by
      refine (rv_extract d L g2 (k1_off92 k ⟨0, by decide⟩) (k1_off92_inb k ⟨0, by decide⟩) (by decide) 9 (by decide) (by decide) (by decide)).trans ?_
      exact rv_word d L fl (wL L).val (2 * t1.val + 1) 1 (2 * k.val + 1) 9 (by decide) (by omega) (by decide) g2 hR1 _
        (by rw [k1_off92_eq]; show 128 * k.val + 16 * 0 + 1088 + 9 = 1024 * 1 + 64 * (2 * k.val + 1) + 9; omega) _
    have hw_v2027_3 : pair1_last.sl.v2027_3 d L k g2 = Spec.tcol (blkWord fl (wL L).val (2 * t1.val + 1) (64 * (2 * k.val + 1) + 10)) := by
      refine (rv_extract d L g2 (k1_off92 k ⟨0, by decide⟩) (k1_off92_inb k ⟨0, by decide⟩) (by decide) 10 (by decide) (by decide) (by decide)).trans ?_
      exact rv_word d L fl (wL L).val (2 * t1.val + 1) 1 (2 * k.val + 1) 10 (by decide) (by omega) (by decide) g2 hR1 _
        (by rw [k1_off92_eq]; show 128 * k.val + 16 * 0 + 1088 + 10 = 1024 * 1 + 64 * (2 * k.val + 1) + 10; omega) _
    have hw_v2063_3 : pair1_last.sl.v2063_3 d L k g2 = Spec.tcol (blkWord fl (wL L).val (2 * t1.val + 1) (64 * (2 * k.val + 1) + 11)) := by
      refine (rv_extract d L g2 (k1_off92 k ⟨0, by decide⟩) (k1_off92_inb k ⟨0, by decide⟩) (by decide) 11 (by decide) (by decide) (by decide)).trans ?_
      exact rv_word d L fl (wL L).val (2 * t1.val + 1) 1 (2 * k.val + 1) 11 (by decide) (by omega) (by decide) g2 hR1 _
        (by rw [k1_off92_eq]; show 128 * k.val + 16 * 0 + 1088 + 11 = 1024 * 1 + 64 * (2 * k.val + 1) + 11; omega) _
    have hw_v2099_3 : pair1_last.sl.v2099_3 d L k g2 = Spec.tcol (blkWord fl (wL L).val (2 * t1.val + 1) (64 * (2 * k.val + 1) + 12)) := by
      refine (rv_extract d L g2 (k1_off92 k ⟨0, by decide⟩) (k1_off92_inb k ⟨0, by decide⟩) (by decide) 12 (by decide) (by decide) (by decide)).trans ?_
      exact rv_word d L fl (wL L).val (2 * t1.val + 1) 1 (2 * k.val + 1) 12 (by decide) (by omega) (by decide) g2 hR1 _
        (by rw [k1_off92_eq]; show 128 * k.val + 16 * 0 + 1088 + 12 = 1024 * 1 + 64 * (2 * k.val + 1) + 12; omega) _
    have hw_v2135_3 : pair1_last.sl.v2135_3 d L k g2 = Spec.tcol (blkWord fl (wL L).val (2 * t1.val + 1) (64 * (2 * k.val + 1) + 13)) := by
      refine (rv_extract d L g2 (k1_off92 k ⟨0, by decide⟩) (k1_off92_inb k ⟨0, by decide⟩) (by decide) 13 (by decide) (by decide) (by decide)).trans ?_
      exact rv_word d L fl (wL L).val (2 * t1.val + 1) 1 (2 * k.val + 1) 13 (by decide) (by omega) (by decide) g2 hR1 _
        (by rw [k1_off92_eq]; show 128 * k.val + 16 * 0 + 1088 + 13 = 1024 * 1 + 64 * (2 * k.val + 1) + 13; omega) _
    have hw_v2171_3 : pair1_last.sl.v2171_3 d L k g2 = Spec.tcol (blkWord fl (wL L).val (2 * t1.val + 1) (64 * (2 * k.val + 1) + 14)) := by
      refine (rv_extract d L g2 (k1_off92 k ⟨0, by decide⟩) (k1_off92_inb k ⟨0, by decide⟩) (by decide) 14 (by decide) (by decide) (by decide)).trans ?_
      exact rv_word d L fl (wL L).val (2 * t1.val + 1) 1 (2 * k.val + 1) 14 (by decide) (by omega) (by decide) g2 hR1 _
        (by rw [k1_off92_eq]; show 128 * k.val + 16 * 0 + 1088 + 14 = 1024 * 1 + 64 * (2 * k.val + 1) + 14; omega) _
    have hw_v2207_3 : pair1_last.sl.v2207_3 d L k g2 = Spec.tcol (blkWord fl (wL L).val (2 * t1.val + 1) (64 * (2 * k.val + 1) + 15)) := by
      refine (rv_extract d L g2 (k1_off92 k ⟨0, by decide⟩) (k1_off92_inb k ⟨0, by decide⟩) (by decide) 15 (by decide) (by decide) (by decide)).trans ?_
      exact rv_word d L fl (wL L).val (2 * t1.val + 1) 1 (2 * k.val + 1) 15 (by decide) (by omega) (by decide) g2 hR1 _
        (by rw [k1_off92_eq]; show 128 * k.val + 16 * 0 + 1088 + 15 = 1024 * 1 + 64 * (2 * k.val + 1) + 15; omega) _
    have hw_v1667_4 : pair1_last.sl.v1667_4 d L k g2 = Spec.tcol (blkWord fl (wL L).val (2 * t1.val + 1) (64 * (2 * k.val + 1) + 16)) := by
      refine (rv_extract d L g2 (k1_off92 k ⟨1, by decide⟩) (k1_off92_inb k ⟨1, by decide⟩) (by decide) 0 (by decide) (by decide) (by decide)).trans ?_
      exact rv_word d L fl (wL L).val (2 * t1.val + 1) 1 (2 * k.val + 1) 16 (by decide) (by omega) (by decide) g2 hR1 _
        (by rw [k1_off92_eq]; show 128 * k.val + 16 * 1 + 1088 + 0 = 1024 * 1 + 64 * (2 * k.val + 1) + 16; omega) _
    have hw_v1703_4 : pair1_last.sl.v1703_4 d L k g2 = Spec.tcol (blkWord fl (wL L).val (2 * t1.val + 1) (64 * (2 * k.val + 1) + 17)) := by
      refine (rv_extract d L g2 (k1_off92 k ⟨1, by decide⟩) (k1_off92_inb k ⟨1, by decide⟩) (by decide) 1 (by decide) (by decide) (by decide)).trans ?_
      exact rv_word d L fl (wL L).val (2 * t1.val + 1) 1 (2 * k.val + 1) 17 (by decide) (by omega) (by decide) g2 hR1 _
        (by rw [k1_off92_eq]; show 128 * k.val + 16 * 1 + 1088 + 1 = 1024 * 1 + 64 * (2 * k.val + 1) + 17; omega) _
    have hw_v1739_4 : pair1_last.sl.v1739_4 d L k g2 = Spec.tcol (blkWord fl (wL L).val (2 * t1.val + 1) (64 * (2 * k.val + 1) + 18)) := by
      refine (rv_extract d L g2 (k1_off92 k ⟨1, by decide⟩) (k1_off92_inb k ⟨1, by decide⟩) (by decide) 2 (by decide) (by decide) (by decide)).trans ?_
      exact rv_word d L fl (wL L).val (2 * t1.val + 1) 1 (2 * k.val + 1) 18 (by decide) (by omega) (by decide) g2 hR1 _
        (by rw [k1_off92_eq]; show 128 * k.val + 16 * 1 + 1088 + 2 = 1024 * 1 + 64 * (2 * k.val + 1) + 18; omega) _
    have hw_v1775_4 : pair1_last.sl.v1775_4 d L k g2 = Spec.tcol (blkWord fl (wL L).val (2 * t1.val + 1) (64 * (2 * k.val + 1) + 19)) := by
      refine (rv_extract d L g2 (k1_off92 k ⟨1, by decide⟩) (k1_off92_inb k ⟨1, by decide⟩) (by decide) 3 (by decide) (by decide) (by decide)).trans ?_
      exact rv_word d L fl (wL L).val (2 * t1.val + 1) 1 (2 * k.val + 1) 19 (by decide) (by omega) (by decide) g2 hR1 _
        (by rw [k1_off92_eq]; show 128 * k.val + 16 * 1 + 1088 + 3 = 1024 * 1 + 64 * (2 * k.val + 1) + 19; omega) _
    have hw_v1811_4 : pair1_last.sl.v1811_4 d L k g2 = Spec.tcol (blkWord fl (wL L).val (2 * t1.val + 1) (64 * (2 * k.val + 1) + 20)) := by
      refine (rv_extract d L g2 (k1_off92 k ⟨1, by decide⟩) (k1_off92_inb k ⟨1, by decide⟩) (by decide) 4 (by decide) (by decide) (by decide)).trans ?_
      exact rv_word d L fl (wL L).val (2 * t1.val + 1) 1 (2 * k.val + 1) 20 (by decide) (by omega) (by decide) g2 hR1 _
        (by rw [k1_off92_eq]; show 128 * k.val + 16 * 1 + 1088 + 4 = 1024 * 1 + 64 * (2 * k.val + 1) + 20; omega) _
    have hw_v1847_4 : pair1_last.sl.v1847_4 d L k g2 = Spec.tcol (blkWord fl (wL L).val (2 * t1.val + 1) (64 * (2 * k.val + 1) + 21)) := by
      refine (rv_extract d L g2 (k1_off92 k ⟨1, by decide⟩) (k1_off92_inb k ⟨1, by decide⟩) (by decide) 5 (by decide) (by decide) (by decide)).trans ?_
      exact rv_word d L fl (wL L).val (2 * t1.val + 1) 1 (2 * k.val + 1) 21 (by decide) (by omega) (by decide) g2 hR1 _
        (by rw [k1_off92_eq]; show 128 * k.val + 16 * 1 + 1088 + 5 = 1024 * 1 + 64 * (2 * k.val + 1) + 21; omega) _
    have hw_v1883_4 : pair1_last.sl.v1883_4 d L k g2 = Spec.tcol (blkWord fl (wL L).val (2 * t1.val + 1) (64 * (2 * k.val + 1) + 22)) := by
      refine (rv_extract d L g2 (k1_off92 k ⟨1, by decide⟩) (k1_off92_inb k ⟨1, by decide⟩) (by decide) 6 (by decide) (by decide) (by decide)).trans ?_
      exact rv_word d L fl (wL L).val (2 * t1.val + 1) 1 (2 * k.val + 1) 22 (by decide) (by omega) (by decide) g2 hR1 _
        (by rw [k1_off92_eq]; show 128 * k.val + 16 * 1 + 1088 + 6 = 1024 * 1 + 64 * (2 * k.val + 1) + 22; omega) _
    have hw_v1919_4 : pair1_last.sl.v1919_4 d L k g2 = Spec.tcol (blkWord fl (wL L).val (2 * t1.val + 1) (64 * (2 * k.val + 1) + 23)) := by
      refine (rv_extract d L g2 (k1_off92 k ⟨1, by decide⟩) (k1_off92_inb k ⟨1, by decide⟩) (by decide) 7 (by decide) (by decide) (by decide)).trans ?_
      exact rv_word d L fl (wL L).val (2 * t1.val + 1) 1 (2 * k.val + 1) 23 (by decide) (by omega) (by decide) g2 hR1 _
        (by rw [k1_off92_eq]; show 128 * k.val + 16 * 1 + 1088 + 7 = 1024 * 1 + 64 * (2 * k.val + 1) + 23; omega) _
    have hw_v1955_4 : pair1_last.sl.v1955_4 d L k g2 = Spec.tcol (blkWord fl (wL L).val (2 * t1.val + 1) (64 * (2 * k.val + 1) + 24)) := by
      refine (rv_extract d L g2 (k1_off92 k ⟨1, by decide⟩) (k1_off92_inb k ⟨1, by decide⟩) (by decide) 8 (by decide) (by decide) (by decide)).trans ?_
      exact rv_word d L fl (wL L).val (2 * t1.val + 1) 1 (2 * k.val + 1) 24 (by decide) (by omega) (by decide) g2 hR1 _
        (by rw [k1_off92_eq]; show 128 * k.val + 16 * 1 + 1088 + 8 = 1024 * 1 + 64 * (2 * k.val + 1) + 24; omega) _
    have hw_v1991_4 : pair1_last.sl.v1991_4 d L k g2 = Spec.tcol (blkWord fl (wL L).val (2 * t1.val + 1) (64 * (2 * k.val + 1) + 25)) := by
      refine (rv_extract d L g2 (k1_off92 k ⟨1, by decide⟩) (k1_off92_inb k ⟨1, by decide⟩) (by decide) 9 (by decide) (by decide) (by decide)).trans ?_
      exact rv_word d L fl (wL L).val (2 * t1.val + 1) 1 (2 * k.val + 1) 25 (by decide) (by omega) (by decide) g2 hR1 _
        (by rw [k1_off92_eq]; show 128 * k.val + 16 * 1 + 1088 + 9 = 1024 * 1 + 64 * (2 * k.val + 1) + 25; omega) _
    have hw_v2027_4 : pair1_last.sl.v2027_4 d L k g2 = Spec.tcol (blkWord fl (wL L).val (2 * t1.val + 1) (64 * (2 * k.val + 1) + 26)) := by
      refine (rv_extract d L g2 (k1_off92 k ⟨1, by decide⟩) (k1_off92_inb k ⟨1, by decide⟩) (by decide) 10 (by decide) (by decide) (by decide)).trans ?_
      exact rv_word d L fl (wL L).val (2 * t1.val + 1) 1 (2 * k.val + 1) 26 (by decide) (by omega) (by decide) g2 hR1 _
        (by rw [k1_off92_eq]; show 128 * k.val + 16 * 1 + 1088 + 10 = 1024 * 1 + 64 * (2 * k.val + 1) + 26; omega) _
    have hw_v2063_4 : pair1_last.sl.v2063_4 d L k g2 = Spec.tcol (blkWord fl (wL L).val (2 * t1.val + 1) (64 * (2 * k.val + 1) + 27)) := by
      refine (rv_extract d L g2 (k1_off92 k ⟨1, by decide⟩) (k1_off92_inb k ⟨1, by decide⟩) (by decide) 11 (by decide) (by decide) (by decide)).trans ?_
      exact rv_word d L fl (wL L).val (2 * t1.val + 1) 1 (2 * k.val + 1) 27 (by decide) (by omega) (by decide) g2 hR1 _
        (by rw [k1_off92_eq]; show 128 * k.val + 16 * 1 + 1088 + 11 = 1024 * 1 + 64 * (2 * k.val + 1) + 27; omega) _
    have hw_v2099_4 : pair1_last.sl.v2099_4 d L k g2 = Spec.tcol (blkWord fl (wL L).val (2 * t1.val + 1) (64 * (2 * k.val + 1) + 28)) := by
      refine (rv_extract d L g2 (k1_off92 k ⟨1, by decide⟩) (k1_off92_inb k ⟨1, by decide⟩) (by decide) 12 (by decide) (by decide) (by decide)).trans ?_
      exact rv_word d L fl (wL L).val (2 * t1.val + 1) 1 (2 * k.val + 1) 28 (by decide) (by omega) (by decide) g2 hR1 _
        (by rw [k1_off92_eq]; show 128 * k.val + 16 * 1 + 1088 + 12 = 1024 * 1 + 64 * (2 * k.val + 1) + 28; omega) _
    have hw_v2135_4 : pair1_last.sl.v2135_4 d L k g2 = Spec.tcol (blkWord fl (wL L).val (2 * t1.val + 1) (64 * (2 * k.val + 1) + 29)) := by
      refine (rv_extract d L g2 (k1_off92 k ⟨1, by decide⟩) (k1_off92_inb k ⟨1, by decide⟩) (by decide) 13 (by decide) (by decide) (by decide)).trans ?_
      exact rv_word d L fl (wL L).val (2 * t1.val + 1) 1 (2 * k.val + 1) 29 (by decide) (by omega) (by decide) g2 hR1 _
        (by rw [k1_off92_eq]; show 128 * k.val + 16 * 1 + 1088 + 13 = 1024 * 1 + 64 * (2 * k.val + 1) + 29; omega) _
    have hw_v2171_4 : pair1_last.sl.v2171_4 d L k g2 = Spec.tcol (blkWord fl (wL L).val (2 * t1.val + 1) (64 * (2 * k.val + 1) + 30)) := by
      refine (rv_extract d L g2 (k1_off92 k ⟨1, by decide⟩) (k1_off92_inb k ⟨1, by decide⟩) (by decide) 14 (by decide) (by decide) (by decide)).trans ?_
      exact rv_word d L fl (wL L).val (2 * t1.val + 1) 1 (2 * k.val + 1) 30 (by decide) (by omega) (by decide) g2 hR1 _
        (by rw [k1_off92_eq]; show 128 * k.val + 16 * 1 + 1088 + 14 = 1024 * 1 + 64 * (2 * k.val + 1) + 30; omega) _
    have hw_v2207_4 : pair1_last.sl.v2207_4 d L k g2 = Spec.tcol (blkWord fl (wL L).val (2 * t1.val + 1) (64 * (2 * k.val + 1) + 31)) := by
      refine (rv_extract d L g2 (k1_off92 k ⟨1, by decide⟩) (k1_off92_inb k ⟨1, by decide⟩) (by decide) 15 (by decide) (by decide) (by decide)).trans ?_
      exact rv_word d L fl (wL L).val (2 * t1.val + 1) 1 (2 * k.val + 1) 31 (by decide) (by omega) (by decide) g2 hR1 _
        (by rw [k1_off92_eq]; show 128 * k.val + 16 * 1 + 1088 + 15 = 1024 * 1 + 64 * (2 * k.val + 1) + 31; omega) _
    have hw_v1667_5 : pair1_last.sl.v1667_5 d L k g2 = Spec.tcol (blkWord fl (wL L).val (2 * t1.val + 1) (64 * (2 * k.val + 1) + 32)) := by
      refine (rv_extract d L g2 (k1_off92 k ⟨2, by decide⟩) (k1_off92_inb k ⟨2, by decide⟩) (by decide) 0 (by decide) (by decide) (by decide)).trans ?_
      exact rv_word d L fl (wL L).val (2 * t1.val + 1) 1 (2 * k.val + 1) 32 (by decide) (by omega) (by decide) g2 hR1 _
        (by rw [k1_off92_eq]; show 128 * k.val + 16 * 2 + 1088 + 0 = 1024 * 1 + 64 * (2 * k.val + 1) + 32; omega) _
    have hw_v1703_5 : pair1_last.sl.v1703_5 d L k g2 = Spec.tcol (blkWord fl (wL L).val (2 * t1.val + 1) (64 * (2 * k.val + 1) + 33)) := by
      refine (rv_extract d L g2 (k1_off92 k ⟨2, by decide⟩) (k1_off92_inb k ⟨2, by decide⟩) (by decide) 1 (by decide) (by decide) (by decide)).trans ?_
      exact rv_word d L fl (wL L).val (2 * t1.val + 1) 1 (2 * k.val + 1) 33 (by decide) (by omega) (by decide) g2 hR1 _
        (by rw [k1_off92_eq]; show 128 * k.val + 16 * 2 + 1088 + 1 = 1024 * 1 + 64 * (2 * k.val + 1) + 33; omega) _
    have hw_v1739_5 : pair1_last.sl.v1739_5 d L k g2 = Spec.tcol (blkWord fl (wL L).val (2 * t1.val + 1) (64 * (2 * k.val + 1) + 34)) := by
      refine (rv_extract d L g2 (k1_off92 k ⟨2, by decide⟩) (k1_off92_inb k ⟨2, by decide⟩) (by decide) 2 (by decide) (by decide) (by decide)).trans ?_
      exact rv_word d L fl (wL L).val (2 * t1.val + 1) 1 (2 * k.val + 1) 34 (by decide) (by omega) (by decide) g2 hR1 _
        (by rw [k1_off92_eq]; show 128 * k.val + 16 * 2 + 1088 + 2 = 1024 * 1 + 64 * (2 * k.val + 1) + 34; omega) _
    have hw_v1775_5 : pair1_last.sl.v1775_5 d L k g2 = Spec.tcol (blkWord fl (wL L).val (2 * t1.val + 1) (64 * (2 * k.val + 1) + 35)) := by
      refine (rv_extract d L g2 (k1_off92 k ⟨2, by decide⟩) (k1_off92_inb k ⟨2, by decide⟩) (by decide) 3 (by decide) (by decide) (by decide)).trans ?_
      exact rv_word d L fl (wL L).val (2 * t1.val + 1) 1 (2 * k.val + 1) 35 (by decide) (by omega) (by decide) g2 hR1 _
        (by rw [k1_off92_eq]; show 128 * k.val + 16 * 2 + 1088 + 3 = 1024 * 1 + 64 * (2 * k.val + 1) + 35; omega) _
    have hw_v1811_5 : pair1_last.sl.v1811_5 d L k g2 = Spec.tcol (blkWord fl (wL L).val (2 * t1.val + 1) (64 * (2 * k.val + 1) + 36)) := by
      refine (rv_extract d L g2 (k1_off92 k ⟨2, by decide⟩) (k1_off92_inb k ⟨2, by decide⟩) (by decide) 4 (by decide) (by decide) (by decide)).trans ?_
      exact rv_word d L fl (wL L).val (2 * t1.val + 1) 1 (2 * k.val + 1) 36 (by decide) (by omega) (by decide) g2 hR1 _
        (by rw [k1_off92_eq]; show 128 * k.val + 16 * 2 + 1088 + 4 = 1024 * 1 + 64 * (2 * k.val + 1) + 36; omega) _
    have hw_v1847_5 : pair1_last.sl.v1847_5 d L k g2 = Spec.tcol (blkWord fl (wL L).val (2 * t1.val + 1) (64 * (2 * k.val + 1) + 37)) := by
      refine (rv_extract d L g2 (k1_off92 k ⟨2, by decide⟩) (k1_off92_inb k ⟨2, by decide⟩) (by decide) 5 (by decide) (by decide) (by decide)).trans ?_
      exact rv_word d L fl (wL L).val (2 * t1.val + 1) 1 (2 * k.val + 1) 37 (by decide) (by omega) (by decide) g2 hR1 _
        (by rw [k1_off92_eq]; show 128 * k.val + 16 * 2 + 1088 + 5 = 1024 * 1 + 64 * (2 * k.val + 1) + 37; omega) _
    have hw_v1883_5 : pair1_last.sl.v1883_5 d L k g2 = Spec.tcol (blkWord fl (wL L).val (2 * t1.val + 1) (64 * (2 * k.val + 1) + 38)) := by
      refine (rv_extract d L g2 (k1_off92 k ⟨2, by decide⟩) (k1_off92_inb k ⟨2, by decide⟩) (by decide) 6 (by decide) (by decide) (by decide)).trans ?_
      exact rv_word d L fl (wL L).val (2 * t1.val + 1) 1 (2 * k.val + 1) 38 (by decide) (by omega) (by decide) g2 hR1 _
        (by rw [k1_off92_eq]; show 128 * k.val + 16 * 2 + 1088 + 6 = 1024 * 1 + 64 * (2 * k.val + 1) + 38; omega) _
    have hw_v1919_5 : pair1_last.sl.v1919_5 d L k g2 = Spec.tcol (blkWord fl (wL L).val (2 * t1.val + 1) (64 * (2 * k.val + 1) + 39)) := by
      refine (rv_extract d L g2 (k1_off92 k ⟨2, by decide⟩) (k1_off92_inb k ⟨2, by decide⟩) (by decide) 7 (by decide) (by decide) (by decide)).trans ?_
      exact rv_word d L fl (wL L).val (2 * t1.val + 1) 1 (2 * k.val + 1) 39 (by decide) (by omega) (by decide) g2 hR1 _
        (by rw [k1_off92_eq]; show 128 * k.val + 16 * 2 + 1088 + 7 = 1024 * 1 + 64 * (2 * k.val + 1) + 39; omega) _
    have hw_v1955_5 : pair1_last.sl.v1955_5 d L k g2 = Spec.tcol (blkWord fl (wL L).val (2 * t1.val + 1) (64 * (2 * k.val + 1) + 40)) := by
      refine (rv_extract d L g2 (k1_off92 k ⟨2, by decide⟩) (k1_off92_inb k ⟨2, by decide⟩) (by decide) 8 (by decide) (by decide) (by decide)).trans ?_
      exact rv_word d L fl (wL L).val (2 * t1.val + 1) 1 (2 * k.val + 1) 40 (by decide) (by omega) (by decide) g2 hR1 _
        (by rw [k1_off92_eq]; show 128 * k.val + 16 * 2 + 1088 + 8 = 1024 * 1 + 64 * (2 * k.val + 1) + 40; omega) _
    have hw_v1991_5 : pair1_last.sl.v1991_5 d L k g2 = Spec.tcol (blkWord fl (wL L).val (2 * t1.val + 1) (64 * (2 * k.val + 1) + 41)) := by
      refine (rv_extract d L g2 (k1_off92 k ⟨2, by decide⟩) (k1_off92_inb k ⟨2, by decide⟩) (by decide) 9 (by decide) (by decide) (by decide)).trans ?_
      exact rv_word d L fl (wL L).val (2 * t1.val + 1) 1 (2 * k.val + 1) 41 (by decide) (by omega) (by decide) g2 hR1 _
        (by rw [k1_off92_eq]; show 128 * k.val + 16 * 2 + 1088 + 9 = 1024 * 1 + 64 * (2 * k.val + 1) + 41; omega) _
    have hw_v2027_5 : pair1_last.sl.v2027_5 d L k g2 = Spec.tcol (blkWord fl (wL L).val (2 * t1.val + 1) (64 * (2 * k.val + 1) + 42)) := by
      refine (rv_extract d L g2 (k1_off92 k ⟨2, by decide⟩) (k1_off92_inb k ⟨2, by decide⟩) (by decide) 10 (by decide) (by decide) (by decide)).trans ?_
      exact rv_word d L fl (wL L).val (2 * t1.val + 1) 1 (2 * k.val + 1) 42 (by decide) (by omega) (by decide) g2 hR1 _
        (by rw [k1_off92_eq]; show 128 * k.val + 16 * 2 + 1088 + 10 = 1024 * 1 + 64 * (2 * k.val + 1) + 42; omega) _
    have hw_v2063_5 : pair1_last.sl.v2063_5 d L k g2 = Spec.tcol (blkWord fl (wL L).val (2 * t1.val + 1) (64 * (2 * k.val + 1) + 43)) := by
      refine (rv_extract d L g2 (k1_off92 k ⟨2, by decide⟩) (k1_off92_inb k ⟨2, by decide⟩) (by decide) 11 (by decide) (by decide) (by decide)).trans ?_
      exact rv_word d L fl (wL L).val (2 * t1.val + 1) 1 (2 * k.val + 1) 43 (by decide) (by omega) (by decide) g2 hR1 _
        (by rw [k1_off92_eq]; show 128 * k.val + 16 * 2 + 1088 + 11 = 1024 * 1 + 64 * (2 * k.val + 1) + 43; omega) _
    have hw_v2099_5 : pair1_last.sl.v2099_5 d L k g2 = Spec.tcol (blkWord fl (wL L).val (2 * t1.val + 1) (64 * (2 * k.val + 1) + 44)) := by
      refine (rv_extract d L g2 (k1_off92 k ⟨2, by decide⟩) (k1_off92_inb k ⟨2, by decide⟩) (by decide) 12 (by decide) (by decide) (by decide)).trans ?_
      exact rv_word d L fl (wL L).val (2 * t1.val + 1) 1 (2 * k.val + 1) 44 (by decide) (by omega) (by decide) g2 hR1 _
        (by rw [k1_off92_eq]; show 128 * k.val + 16 * 2 + 1088 + 12 = 1024 * 1 + 64 * (2 * k.val + 1) + 44; omega) _
    have hw_v2135_5 : pair1_last.sl.v2135_5 d L k g2 = Spec.tcol (blkWord fl (wL L).val (2 * t1.val + 1) (64 * (2 * k.val + 1) + 45)) := by
      refine (rv_extract d L g2 (k1_off92 k ⟨2, by decide⟩) (k1_off92_inb k ⟨2, by decide⟩) (by decide) 13 (by decide) (by decide) (by decide)).trans ?_
      exact rv_word d L fl (wL L).val (2 * t1.val + 1) 1 (2 * k.val + 1) 45 (by decide) (by omega) (by decide) g2 hR1 _
        (by rw [k1_off92_eq]; show 128 * k.val + 16 * 2 + 1088 + 13 = 1024 * 1 + 64 * (2 * k.val + 1) + 45; omega) _
    have hw_v2171_5 : pair1_last.sl.v2171_5 d L k g2 = Spec.tcol (blkWord fl (wL L).val (2 * t1.val + 1) (64 * (2 * k.val + 1) + 46)) := by
      refine (rv_extract d L g2 (k1_off92 k ⟨2, by decide⟩) (k1_off92_inb k ⟨2, by decide⟩) (by decide) 14 (by decide) (by decide) (by decide)).trans ?_
      exact rv_word d L fl (wL L).val (2 * t1.val + 1) 1 (2 * k.val + 1) 46 (by decide) (by omega) (by decide) g2 hR1 _
        (by rw [k1_off92_eq]; show 128 * k.val + 16 * 2 + 1088 + 14 = 1024 * 1 + 64 * (2 * k.val + 1) + 46; omega) _
    have hw_v2207_5 : pair1_last.sl.v2207_5 d L k g2 = Spec.tcol (blkWord fl (wL L).val (2 * t1.val + 1) (64 * (2 * k.val + 1) + 47)) := by
      refine (rv_extract d L g2 (k1_off92 k ⟨2, by decide⟩) (k1_off92_inb k ⟨2, by decide⟩) (by decide) 15 (by decide) (by decide) (by decide)).trans ?_
      exact rv_word d L fl (wL L).val (2 * t1.val + 1) 1 (2 * k.val + 1) 47 (by decide) (by omega) (by decide) g2 hR1 _
        (by rw [k1_off92_eq]; show 128 * k.val + 16 * 2 + 1088 + 15 = 1024 * 1 + 64 * (2 * k.val + 1) + 47; omega) _
    have hw_v1572 : pair1_last.sl.v1572 d L k g2 = Spec.tcol (blkWord fl (wL L).val (2 * t1.val + 1) (64 * (2 * k.val + 1) + 48)) := by
      refine (rv_extract d L g2 (k1_off109 k) (k1_off109_inb k) (by decide) 0 (by decide) (by decide) (by decide)).trans ?_
      exact rv_word d L fl (wL L).val (2 * t1.val + 1) 1 (2 * k.val + 1) 48 (by decide) (by omega) (by decide) g2 hR1 _
        (by rw [k1_off109_eq]; show 128 * k.val + 1136 + 0 = 1024 * 1 + 64 * (2 * k.val + 1) + 48; omega) _
    have hw_v1606 : pair1_last.sl.v1606 d L k g2 = Spec.tcol (blkWord fl (wL L).val (2 * t1.val + 1) (64 * (2 * k.val + 1) + 49)) := by
      refine (rv_extract d L g2 (k1_off109 k) (k1_off109_inb k) (by decide) 1 (by decide) (by decide) (by decide)).trans ?_
      exact rv_word d L fl (wL L).val (2 * t1.val + 1) 1 (2 * k.val + 1) 49 (by decide) (by omega) (by decide) g2 hR1 _
        (by rw [k1_off109_eq]; show 128 * k.val + 1136 + 1 = 1024 * 1 + 64 * (2 * k.val + 1) + 49; omega) _
    have s_A0_0 : addf (AccMath.accVec (rowF fl tab (wL L).val (2 * t1.val + 1) (2 * k.val)) (offF fl (wL L).val (2 * t1.val + 1) (2 * k.val)) 0 0) (shapeCast S16 (pair1_last.sl.v1673 d L tab k r g1 g2 hR hin) hc16) = AccMath.accVec (rowF fl tab (wL L).val (2 * t1.val + 1) (2 * k.val)) (offF fl (wL L).val (2 * t1.val + 1) (2 * k.val)) 0 1 :=
      acc_step d L fl tab (wL L).val (2 * t1.val + 1) (2 * k.val) 0 _ hRA ⟨0, by decide⟩ ⟨0, by decide⟩ _ rfl _ hw_v1667 _ (k1_off66_form ..) _ hc16
    have s_A0_1 : addf (AccMath.accVec (rowF fl tab (wL L).val (2 * t1.val + 1) (2 * k.val)) (offF fl (wL L).val (2 * t1.val + 1) (2 * k.val)) 0 1) (shapeCast S16 (pair1_last.sl.v1709 d L tab k r g1 g2 hR hin) hc16) = AccMath.accVec (rowF fl tab (wL L).val (2 * t1.val + 1) (2 * k.val)) (offF fl (wL L).val (2 * t1.val + 1) (2 * k.val)) 0 2 :=
      acc_step d L fl tab (wL L).val (2 * t1.val + 1) (2 * k.val) 0 _ hRA ⟨1, by decide⟩ ⟨0, by decide⟩ _ rfl _ hw_v1703 _ (k1_off67_form ..) _ hc16
    have s_A0_2 : addf (AccMath.accVec (rowF fl tab (wL L).val (2 * t1.val + 1) (2 * k.val)) (offF fl (wL L).val (2 * t1.val + 1) (2 * k.val)) 0 2) (shapeCast S16 (pair1_last.sl.v1745 d L tab k r g1 g2 hR hin) hc16) = AccMath.accVec (rowF fl tab (wL L).val (2 * t1.val + 1) (2 * k.val)) (offF fl (wL L).val (2 * t1.val + 1) (2 * k.val)) 0 3 :=
      acc_step d L fl tab (wL L).val (2 * t1.val + 1) (2 * k.val) 0 _ hRA ⟨2, by decide⟩ ⟨0, by decide⟩ _ rfl _ hw_v1739 _ (k1_off68_form ..) _ hc16
    have s_A0_3 : addf (AccMath.accVec (rowF fl tab (wL L).val (2 * t1.val + 1) (2 * k.val)) (offF fl (wL L).val (2 * t1.val + 1) (2 * k.val)) 0 3) (shapeCast S16 (pair1_last.sl.v1781 d L tab k r g1 g2 hR hin) hc16) = AccMath.accVec (rowF fl tab (wL L).val (2 * t1.val + 1) (2 * k.val)) (offF fl (wL L).val (2 * t1.val + 1) (2 * k.val)) 0 4 :=
      acc_step d L fl tab (wL L).val (2 * t1.val + 1) (2 * k.val) 0 _ hRA ⟨3, by decide⟩ ⟨0, by decide⟩ _ rfl _ hw_v1775 _ (k1_off69_form ..) _ hc16
    have s_A0_4 : addf (AccMath.accVec (rowF fl tab (wL L).val (2 * t1.val + 1) (2 * k.val)) (offF fl (wL L).val (2 * t1.val + 1) (2 * k.val)) 0 4) (shapeCast S16 (pair1_last.sl.v1817 d L tab k r g1 g2 hR hin) hc16) = AccMath.accVec (rowF fl tab (wL L).val (2 * t1.val + 1) (2 * k.val)) (offF fl (wL L).val (2 * t1.val + 1) (2 * k.val)) 0 5 :=
      acc_step d L fl tab (wL L).val (2 * t1.val + 1) (2 * k.val) 0 _ hRA ⟨4, by decide⟩ ⟨0, by decide⟩ _ rfl _ hw_v1811 _ (k1_off70_form ..) _ hc16
    have s_A0_5 : addf (AccMath.accVec (rowF fl tab (wL L).val (2 * t1.val + 1) (2 * k.val)) (offF fl (wL L).val (2 * t1.val + 1) (2 * k.val)) 0 5) (shapeCast S16 (pair1_last.sl.v1853 d L tab k r g1 g2 hR hin) hc16) = AccMath.accVec (rowF fl tab (wL L).val (2 * t1.val + 1) (2 * k.val)) (offF fl (wL L).val (2 * t1.val + 1) (2 * k.val)) 0 6 :=
      acc_step d L fl tab (wL L).val (2 * t1.val + 1) (2 * k.val) 0 _ hRA ⟨5, by decide⟩ ⟨0, by decide⟩ _ rfl _ hw_v1847 _ (k1_off71_form ..) _ hc16
    have s_A0_6 : addf (AccMath.accVec (rowF fl tab (wL L).val (2 * t1.val + 1) (2 * k.val)) (offF fl (wL L).val (2 * t1.val + 1) (2 * k.val)) 0 6) (shapeCast S16 (pair1_last.sl.v1889 d L tab k r g1 g2 hR hin) hc16) = AccMath.accVec (rowF fl tab (wL L).val (2 * t1.val + 1) (2 * k.val)) (offF fl (wL L).val (2 * t1.val + 1) (2 * k.val)) 0 7 :=
      acc_step d L fl tab (wL L).val (2 * t1.val + 1) (2 * k.val) 0 _ hRA ⟨6, by decide⟩ ⟨0, by decide⟩ _ rfl _ hw_v1883 _ (k1_off72_form ..) _ hc16
    have s_A0_7 : addf (AccMath.accVec (rowF fl tab (wL L).val (2 * t1.val + 1) (2 * k.val)) (offF fl (wL L).val (2 * t1.val + 1) (2 * k.val)) 0 7) (shapeCast S16 (pair1_last.sl.v1925 d L tab k r g1 g2 hR hin) hc16) = AccMath.accVec (rowF fl tab (wL L).val (2 * t1.val + 1) (2 * k.val)) (offF fl (wL L).val (2 * t1.val + 1) (2 * k.val)) 0 8 :=
      acc_step d L fl tab (wL L).val (2 * t1.val + 1) (2 * k.val) 0 _ hRA ⟨7, by decide⟩ ⟨0, by decide⟩ _ rfl _ hw_v1919 _ (k1_off73_form ..) _ hc16
    have s_A0_8 : addf (AccMath.accVec (rowF fl tab (wL L).val (2 * t1.val + 1) (2 * k.val)) (offF fl (wL L).val (2 * t1.val + 1) (2 * k.val)) 0 8) (shapeCast S16 (pair1_last.sl.v1961 d L tab k r g1 g2 hR hin) hc16) = AccMath.accVec (rowF fl tab (wL L).val (2 * t1.val + 1) (2 * k.val)) (offF fl (wL L).val (2 * t1.val + 1) (2 * k.val)) 0 9 :=
      acc_step d L fl tab (wL L).val (2 * t1.val + 1) (2 * k.val) 0 _ hRA ⟨8, by decide⟩ ⟨0, by decide⟩ _ rfl _ hw_v1955 _ (k1_off74_form ..) _ hc16
    have s_A0_9 : addf (AccMath.accVec (rowF fl tab (wL L).val (2 * t1.val + 1) (2 * k.val)) (offF fl (wL L).val (2 * t1.val + 1) (2 * k.val)) 0 9) (shapeCast S16 (pair1_last.sl.v1997 d L tab k r g1 g2 hR hin) hc16) = AccMath.accVec (rowF fl tab (wL L).val (2 * t1.val + 1) (2 * k.val)) (offF fl (wL L).val (2 * t1.val + 1) (2 * k.val)) 0 10 :=
      acc_step d L fl tab (wL L).val (2 * t1.val + 1) (2 * k.val) 0 _ hRA ⟨9, by decide⟩ ⟨0, by decide⟩ _ rfl _ hw_v1991 _ (k1_off75_form ..) _ hc16
    have s_A0_10 : addf (AccMath.accVec (rowF fl tab (wL L).val (2 * t1.val + 1) (2 * k.val)) (offF fl (wL L).val (2 * t1.val + 1) (2 * k.val)) 0 10) (shapeCast S16 (pair1_last.sl.v2033 d L tab k r g1 g2 hR hin) hc16) = AccMath.accVec (rowF fl tab (wL L).val (2 * t1.val + 1) (2 * k.val)) (offF fl (wL L).val (2 * t1.val + 1) (2 * k.val)) 0 11 :=
      acc_step d L fl tab (wL L).val (2 * t1.val + 1) (2 * k.val) 0 _ hRA ⟨10, by decide⟩ ⟨0, by decide⟩ _ rfl _ hw_v2027 _ (k1_off76_form ..) _ hc16
    have s_A0_11 : addf (AccMath.accVec (rowF fl tab (wL L).val (2 * t1.val + 1) (2 * k.val)) (offF fl (wL L).val (2 * t1.val + 1) (2 * k.val)) 0 11) (shapeCast S16 (pair1_last.sl.v2069 d L tab k r g1 g2 hR hin) hc16) = AccMath.accVec (rowF fl tab (wL L).val (2 * t1.val + 1) (2 * k.val)) (offF fl (wL L).val (2 * t1.val + 1) (2 * k.val)) 0 12 :=
      acc_step d L fl tab (wL L).val (2 * t1.val + 1) (2 * k.val) 0 _ hRA ⟨11, by decide⟩ ⟨0, by decide⟩ _ rfl _ hw_v2063 _ (k1_off77_form ..) _ hc16
    have s_A0_12 : addf (AccMath.accVec (rowF fl tab (wL L).val (2 * t1.val + 1) (2 * k.val)) (offF fl (wL L).val (2 * t1.val + 1) (2 * k.val)) 0 12) (shapeCast S16 (pair1_last.sl.v2105 d L tab k r g1 g2 hR hin) hc16) = AccMath.accVec (rowF fl tab (wL L).val (2 * t1.val + 1) (2 * k.val)) (offF fl (wL L).val (2 * t1.val + 1) (2 * k.val)) 0 13 :=
      acc_step d L fl tab (wL L).val (2 * t1.val + 1) (2 * k.val) 0 _ hRA ⟨12, by decide⟩ ⟨0, by decide⟩ _ rfl _ hw_v2099 _ (k1_off78_form ..) _ hc16
    have s_A0_13 : addf (AccMath.accVec (rowF fl tab (wL L).val (2 * t1.val + 1) (2 * k.val)) (offF fl (wL L).val (2 * t1.val + 1) (2 * k.val)) 0 13) (shapeCast S16 (pair1_last.sl.v2141 d L tab k r g1 g2 hR hin) hc16) = AccMath.accVec (rowF fl tab (wL L).val (2 * t1.val + 1) (2 * k.val)) (offF fl (wL L).val (2 * t1.val + 1) (2 * k.val)) 0 14 :=
      acc_step d L fl tab (wL L).val (2 * t1.val + 1) (2 * k.val) 0 _ hRA ⟨13, by decide⟩ ⟨0, by decide⟩ _ rfl _ hw_v2135 _ (k1_off79_form ..) _ hc16
    have s_A0_14 : addf (AccMath.accVec (rowF fl tab (wL L).val (2 * t1.val + 1) (2 * k.val)) (offF fl (wL L).val (2 * t1.val + 1) (2 * k.val)) 0 14) (shapeCast S16 (pair1_last.sl.v2177 d L tab k r g1 g2 hR hin) hc16) = AccMath.accVec (rowF fl tab (wL L).val (2 * t1.val + 1) (2 * k.val)) (offF fl (wL L).val (2 * t1.val + 1) (2 * k.val)) 0 15 :=
      acc_step d L fl tab (wL L).val (2 * t1.val + 1) (2 * k.val) 0 _ hRA ⟨14, by decide⟩ ⟨0, by decide⟩ _ rfl _ hw_v2171 _ (k1_off80_form ..) _ hc16
    have s_A0_15 : addf (AccMath.accVec (rowF fl tab (wL L).val (2 * t1.val + 1) (2 * k.val)) (offF fl (wL L).val (2 * t1.val + 1) (2 * k.val)) 0 15) (shapeCast S16 (pair1_last.sl.v2213 d L tab k r g1 g2 hR hin) hc16) = AccMath.accVec (rowF fl tab (wL L).val (2 * t1.val + 1) (2 * k.val)) (offF fl (wL L).val (2 * t1.val + 1) (2 * k.val)) 0 16 :=
      acc_step d L fl tab (wL L).val (2 * t1.val + 1) (2 * k.val) 0 _ hRA ⟨15, by decide⟩ ⟨0, by decide⟩ _ rfl _ hw_v2207 _ (k1_off81_form ..) _ hc16
    have s_A0_16 : addf (AccMath.accVec (rowF fl tab (wL L).val (2 * t1.val + 1) (2 * k.val)) (offF fl (wL L).val (2 * t1.val + 1) (2 * k.val)) 0 16) (shapeCast S16 (pair1_last.sl.v1673_1 d L tab k r g1 g2 hR hin) hc16) = AccMath.accVec (rowF fl tab (wL L).val (2 * t1.val + 1) (2 * k.val)) (offF fl (wL L).val (2 * t1.val + 1) (2 * k.val)) 0 17 :=
      acc_step d L fl tab (wL L).val (2 * t1.val + 1) (2 * k.val) 0 _ hRA ⟨16, by decide⟩ ⟨0, by decide⟩ _ rfl _ hw_v1667_1 _ (k1_off66_form ..) _ hc16
    have s_A0_17 : addf (AccMath.accVec (rowF fl tab (wL L).val (2 * t1.val + 1) (2 * k.val)) (offF fl (wL L).val (2 * t1.val + 1) (2 * k.val)) 0 17) (shapeCast S16 (pair1_last.sl.v1709_1 d L tab k r g1 g2 hR hin) hc16) = AccMath.accVec (rowF fl tab (wL L).val (2 * t1.val + 1) (2 * k.val)) (offF fl (wL L).val (2 * t1.val + 1) (2 * k.val)) 0 18 :=
      acc_step d L fl tab (wL L).val (2 * t1.val + 1) (2 * k.val) 0 _ hRA ⟨17, by decide⟩ ⟨0, by decide⟩ _ rfl _ hw_v1703_1 _ (k1_off67_form ..) _ hc16
    have s_A0_18 : addf (AccMath.accVec (rowF fl tab (wL L).val (2 * t1.val + 1) (2 * k.val)) (offF fl (wL L).val (2 * t1.val + 1) (2 * k.val)) 0 18) (shapeCast S16 (pair1_last.sl.v1745_1 d L tab k r g1 g2 hR hin) hc16) = AccMath.accVec (rowF fl tab (wL L).val (2 * t1.val + 1) (2 * k.val)) (offF fl (wL L).val (2 * t1.val + 1) (2 * k.val)) 0 19 :=
      acc_step d L fl tab (wL L).val (2 * t1.val + 1) (2 * k.val) 0 _ hRA ⟨18, by decide⟩ ⟨0, by decide⟩ _ rfl _ hw_v1739_1 _ (k1_off68_form ..) _ hc16
    have s_A0_19 : addf (AccMath.accVec (rowF fl tab (wL L).val (2 * t1.val + 1) (2 * k.val)) (offF fl (wL L).val (2 * t1.val + 1) (2 * k.val)) 0 19) (shapeCast S16 (pair1_last.sl.v1781_1 d L tab k r g1 g2 hR hin) hc16) = AccMath.accVec (rowF fl tab (wL L).val (2 * t1.val + 1) (2 * k.val)) (offF fl (wL L).val (2 * t1.val + 1) (2 * k.val)) 0 20 :=
      acc_step d L fl tab (wL L).val (2 * t1.val + 1) (2 * k.val) 0 _ hRA ⟨19, by decide⟩ ⟨0, by decide⟩ _ rfl _ hw_v1775_1 _ (k1_off69_form ..) _ hc16
    have s_A0_20 : addf (AccMath.accVec (rowF fl tab (wL L).val (2 * t1.val + 1) (2 * k.val)) (offF fl (wL L).val (2 * t1.val + 1) (2 * k.val)) 0 20) (shapeCast S16 (pair1_last.sl.v1817_1 d L tab k r g1 g2 hR hin) hc16) = AccMath.accVec (rowF fl tab (wL L).val (2 * t1.val + 1) (2 * k.val)) (offF fl (wL L).val (2 * t1.val + 1) (2 * k.val)) 0 21 :=
      acc_step d L fl tab (wL L).val (2 * t1.val + 1) (2 * k.val) 0 _ hRA ⟨20, by decide⟩ ⟨0, by decide⟩ _ rfl _ hw_v1811_1 _ (k1_off70_form ..) _ hc16
    have s_A0_21 : addf (AccMath.accVec (rowF fl tab (wL L).val (2 * t1.val + 1) (2 * k.val)) (offF fl (wL L).val (2 * t1.val + 1) (2 * k.val)) 0 21) (shapeCast S16 (pair1_last.sl.v1853_1 d L tab k r g1 g2 hR hin) hc16) = AccMath.accVec (rowF fl tab (wL L).val (2 * t1.val + 1) (2 * k.val)) (offF fl (wL L).val (2 * t1.val + 1) (2 * k.val)) 0 22 :=
      acc_step d L fl tab (wL L).val (2 * t1.val + 1) (2 * k.val) 0 _ hRA ⟨21, by decide⟩ ⟨0, by decide⟩ _ rfl _ hw_v1847_1 _ (k1_off71_form ..) _ hc16
    have s_A0_22 : addf (AccMath.accVec (rowF fl tab (wL L).val (2 * t1.val + 1) (2 * k.val)) (offF fl (wL L).val (2 * t1.val + 1) (2 * k.val)) 0 22) (shapeCast S16 (pair1_last.sl.v1889_1 d L tab k r g1 g2 hR hin) hc16) = AccMath.accVec (rowF fl tab (wL L).val (2 * t1.val + 1) (2 * k.val)) (offF fl (wL L).val (2 * t1.val + 1) (2 * k.val)) 0 23 :=
      acc_step d L fl tab (wL L).val (2 * t1.val + 1) (2 * k.val) 0 _ hRA ⟨22, by decide⟩ ⟨0, by decide⟩ _ rfl _ hw_v1883_1 _ (k1_off72_form ..) _ hc16
    have s_A0_23 : addf (AccMath.accVec (rowF fl tab (wL L).val (2 * t1.val + 1) (2 * k.val)) (offF fl (wL L).val (2 * t1.val + 1) (2 * k.val)) 0 23) (shapeCast S16 (pair1_last.sl.v1925_1 d L tab k r g1 g2 hR hin) hc16) = AccMath.accVec (rowF fl tab (wL L).val (2 * t1.val + 1) (2 * k.val)) (offF fl (wL L).val (2 * t1.val + 1) (2 * k.val)) 0 24 :=
      acc_step d L fl tab (wL L).val (2 * t1.val + 1) (2 * k.val) 0 _ hRA ⟨23, by decide⟩ ⟨0, by decide⟩ _ rfl _ hw_v1919_1 _ (k1_off73_form ..) _ hc16
    have s_A0_24 : addf (AccMath.accVec (rowF fl tab (wL L).val (2 * t1.val + 1) (2 * k.val)) (offF fl (wL L).val (2 * t1.val + 1) (2 * k.val)) 0 24) (shapeCast S16 (pair1_last.sl.v1961_1 d L tab k r g1 g2 hR hin) hc16) = AccMath.accVec (rowF fl tab (wL L).val (2 * t1.val + 1) (2 * k.val)) (offF fl (wL L).val (2 * t1.val + 1) (2 * k.val)) 0 25 :=
      acc_step d L fl tab (wL L).val (2 * t1.val + 1) (2 * k.val) 0 _ hRA ⟨24, by decide⟩ ⟨0, by decide⟩ _ rfl _ hw_v1955_1 _ (k1_off74_form ..) _ hc16
    have s_A0_25 : addf (AccMath.accVec (rowF fl tab (wL L).val (2 * t1.val + 1) (2 * k.val)) (offF fl (wL L).val (2 * t1.val + 1) (2 * k.val)) 0 25) (shapeCast S16 (pair1_last.sl.v1997_1 d L tab k r g1 g2 hR hin) hc16) = AccMath.accVec (rowF fl tab (wL L).val (2 * t1.val + 1) (2 * k.val)) (offF fl (wL L).val (2 * t1.val + 1) (2 * k.val)) 0 26 :=
      acc_step d L fl tab (wL L).val (2 * t1.val + 1) (2 * k.val) 0 _ hRA ⟨25, by decide⟩ ⟨0, by decide⟩ _ rfl _ hw_v1991_1 _ (k1_off75_form ..) _ hc16
    have s_A0_26 : addf (AccMath.accVec (rowF fl tab (wL L).val (2 * t1.val + 1) (2 * k.val)) (offF fl (wL L).val (2 * t1.val + 1) (2 * k.val)) 0 26) (shapeCast S16 (pair1_last.sl.v2033_1 d L tab k r g1 g2 hR hin) hc16) = AccMath.accVec (rowF fl tab (wL L).val (2 * t1.val + 1) (2 * k.val)) (offF fl (wL L).val (2 * t1.val + 1) (2 * k.val)) 0 27 :=
      acc_step d L fl tab (wL L).val (2 * t1.val + 1) (2 * k.val) 0 _ hRA ⟨26, by decide⟩ ⟨0, by decide⟩ _ rfl _ hw_v2027_1 _ (k1_off76_form ..) _ hc16
    have s_A0_27 : addf (AccMath.accVec (rowF fl tab (wL L).val (2 * t1.val + 1) (2 * k.val)) (offF fl (wL L).val (2 * t1.val + 1) (2 * k.val)) 0 27) (shapeCast S16 (pair1_last.sl.v2069_1 d L tab k r g1 g2 hR hin) hc16) = AccMath.accVec (rowF fl tab (wL L).val (2 * t1.val + 1) (2 * k.val)) (offF fl (wL L).val (2 * t1.val + 1) (2 * k.val)) 0 28 :=
      acc_step d L fl tab (wL L).val (2 * t1.val + 1) (2 * k.val) 0 _ hRA ⟨27, by decide⟩ ⟨0, by decide⟩ _ rfl _ hw_v2063_1 _ (k1_off77_form ..) _ hc16
    have s_A0_28 : addf (AccMath.accVec (rowF fl tab (wL L).val (2 * t1.val + 1) (2 * k.val)) (offF fl (wL L).val (2 * t1.val + 1) (2 * k.val)) 0 28) (shapeCast S16 (pair1_last.sl.v2105_1 d L tab k r g1 g2 hR hin) hc16) = AccMath.accVec (rowF fl tab (wL L).val (2 * t1.val + 1) (2 * k.val)) (offF fl (wL L).val (2 * t1.val + 1) (2 * k.val)) 0 29 :=
      acc_step d L fl tab (wL L).val (2 * t1.val + 1) (2 * k.val) 0 _ hRA ⟨28, by decide⟩ ⟨0, by decide⟩ _ rfl _ hw_v2099_1 _ (k1_off78_form ..) _ hc16
    have s_A0_29 : addf (AccMath.accVec (rowF fl tab (wL L).val (2 * t1.val + 1) (2 * k.val)) (offF fl (wL L).val (2 * t1.val + 1) (2 * k.val)) 0 29) (shapeCast S16 (pair1_last.sl.v2141_1 d L tab k r g1 g2 hR hin) hc16) = AccMath.accVec (rowF fl tab (wL L).val (2 * t1.val + 1) (2 * k.val)) (offF fl (wL L).val (2 * t1.val + 1) (2 * k.val)) 0 30 :=
      acc_step d L fl tab (wL L).val (2 * t1.val + 1) (2 * k.val) 0 _ hRA ⟨29, by decide⟩ ⟨0, by decide⟩ _ rfl _ hw_v2135_1 _ (k1_off79_form ..) _ hc16
    have s_A0_30 : addf (AccMath.accVec (rowF fl tab (wL L).val (2 * t1.val + 1) (2 * k.val)) (offF fl (wL L).val (2 * t1.val + 1) (2 * k.val)) 0 30) (shapeCast S16 (pair1_last.sl.v2177_1 d L tab k r g1 g2 hR hin) hc16) = AccMath.accVec (rowF fl tab (wL L).val (2 * t1.val + 1) (2 * k.val)) (offF fl (wL L).val (2 * t1.val + 1) (2 * k.val)) 0 31 :=
      acc_step d L fl tab (wL L).val (2 * t1.val + 1) (2 * k.val) 0 _ hRA ⟨30, by decide⟩ ⟨0, by decide⟩ _ rfl _ hw_v2171_1 _ (k1_off80_form ..) _ hc16
    have s_A0_31 : addf (AccMath.accVec (rowF fl tab (wL L).val (2 * t1.val + 1) (2 * k.val)) (offF fl (wL L).val (2 * t1.val + 1) (2 * k.val)) 0 31) (shapeCast S16 (pair1_last.sl.v2213_1 d L tab k r g1 g2 hR hin) hc16) = AccMath.accVec (rowF fl tab (wL L).val (2 * t1.val + 1) (2 * k.val)) (offF fl (wL L).val (2 * t1.val + 1) (2 * k.val)) 0 32 :=
      acc_step d L fl tab (wL L).val (2 * t1.val + 1) (2 * k.val) 0 _ hRA ⟨31, by decide⟩ ⟨0, by decide⟩ _ rfl _ hw_v2207_1 _ (k1_off81_form ..) _ hc16
    have s_A0_32 : addf (AccMath.accVec (rowF fl tab (wL L).val (2 * t1.val + 1) (2 * k.val)) (offF fl (wL L).val (2 * t1.val + 1) (2 * k.val)) 0 32) (shapeCast S16 (pair1_last.sl.v1673_2 d L tab k r g1 g2 hR hin) hc16) = AccMath.accVec (rowF fl tab (wL L).val (2 * t1.val + 1) (2 * k.val)) (offF fl (wL L).val (2 * t1.val + 1) (2 * k.val)) 0 33 :=
      acc_step d L fl tab (wL L).val (2 * t1.val + 1) (2 * k.val) 0 _ hRA ⟨32, by decide⟩ ⟨0, by decide⟩ _ rfl _ hw_v1667_2 _ (k1_off66_form ..) _ hc16
    have s_A0_33 : addf (AccMath.accVec (rowF fl tab (wL L).val (2 * t1.val + 1) (2 * k.val)) (offF fl (wL L).val (2 * t1.val + 1) (2 * k.val)) 0 33) (shapeCast S16 (pair1_last.sl.v1709_2 d L tab k r g1 g2 hR hin) hc16) = AccMath.accVec (rowF fl tab (wL L).val (2 * t1.val + 1) (2 * k.val)) (offF fl (wL L).val (2 * t1.val + 1) (2 * k.val)) 0 34 :=
      acc_step d L fl tab (wL L).val (2 * t1.val + 1) (2 * k.val) 0 _ hRA ⟨33, by decide⟩ ⟨0, by decide⟩ _ rfl _ hw_v1703_2 _ (k1_off67_form ..) _ hc16
    have s_A0_34 : addf (AccMath.accVec (rowF fl tab (wL L).val (2 * t1.val + 1) (2 * k.val)) (offF fl (wL L).val (2 * t1.val + 1) (2 * k.val)) 0 34) (shapeCast S16 (pair1_last.sl.v1745_2 d L tab k r g1 g2 hR hin) hc16) = AccMath.accVec (rowF fl tab (wL L).val (2 * t1.val + 1) (2 * k.val)) (offF fl (wL L).val (2 * t1.val + 1) (2 * k.val)) 0 35 :=
      acc_step d L fl tab (wL L).val (2 * t1.val + 1) (2 * k.val) 0 _ hRA ⟨34, by decide⟩ ⟨0, by decide⟩ _ rfl _ hw_v1739_2 _ (k1_off68_form ..) _ hc16
    have s_A0_35 : addf (AccMath.accVec (rowF fl tab (wL L).val (2 * t1.val + 1) (2 * k.val)) (offF fl (wL L).val (2 * t1.val + 1) (2 * k.val)) 0 35) (shapeCast S16 (pair1_last.sl.v1781_2 d L tab k r g1 g2 hR hin) hc16) = AccMath.accVec (rowF fl tab (wL L).val (2 * t1.val + 1) (2 * k.val)) (offF fl (wL L).val (2 * t1.val + 1) (2 * k.val)) 0 36 :=
      acc_step d L fl tab (wL L).val (2 * t1.val + 1) (2 * k.val) 0 _ hRA ⟨35, by decide⟩ ⟨0, by decide⟩ _ rfl _ hw_v1775_2 _ (k1_off69_form ..) _ hc16
    have s_A0_36 : addf (AccMath.accVec (rowF fl tab (wL L).val (2 * t1.val + 1) (2 * k.val)) (offF fl (wL L).val (2 * t1.val + 1) (2 * k.val)) 0 36) (shapeCast S16 (pair1_last.sl.v1817_2 d L tab k r g1 g2 hR hin) hc16) = AccMath.accVec (rowF fl tab (wL L).val (2 * t1.val + 1) (2 * k.val)) (offF fl (wL L).val (2 * t1.val + 1) (2 * k.val)) 0 37 :=
      acc_step d L fl tab (wL L).val (2 * t1.val + 1) (2 * k.val) 0 _ hRA ⟨36, by decide⟩ ⟨0, by decide⟩ _ rfl _ hw_v1811_2 _ (k1_off70_form ..) _ hc16
    have s_A0_37 : addf (AccMath.accVec (rowF fl tab (wL L).val (2 * t1.val + 1) (2 * k.val)) (offF fl (wL L).val (2 * t1.val + 1) (2 * k.val)) 0 37) (shapeCast S16 (pair1_last.sl.v1853_2 d L tab k r g1 g2 hR hin) hc16) = AccMath.accVec (rowF fl tab (wL L).val (2 * t1.val + 1) (2 * k.val)) (offF fl (wL L).val (2 * t1.val + 1) (2 * k.val)) 0 38 :=
      acc_step d L fl tab (wL L).val (2 * t1.val + 1) (2 * k.val) 0 _ hRA ⟨37, by decide⟩ ⟨0, by decide⟩ _ rfl _ hw_v1847_2 _ (k1_off71_form ..) _ hc16
    have s_A0_38 : addf (AccMath.accVec (rowF fl tab (wL L).val (2 * t1.val + 1) (2 * k.val)) (offF fl (wL L).val (2 * t1.val + 1) (2 * k.val)) 0 38) (shapeCast S16 (pair1_last.sl.v1889_2 d L tab k r g1 g2 hR hin) hc16) = AccMath.accVec (rowF fl tab (wL L).val (2 * t1.val + 1) (2 * k.val)) (offF fl (wL L).val (2 * t1.val + 1) (2 * k.val)) 0 39 :=
      acc_step d L fl tab (wL L).val (2 * t1.val + 1) (2 * k.val) 0 _ hRA ⟨38, by decide⟩ ⟨0, by decide⟩ _ rfl _ hw_v1883_2 _ (k1_off72_form ..) _ hc16
    have s_A0_39 : addf (AccMath.accVec (rowF fl tab (wL L).val (2 * t1.val + 1) (2 * k.val)) (offF fl (wL L).val (2 * t1.val + 1) (2 * k.val)) 0 39) (shapeCast S16 (pair1_last.sl.v1925_2 d L tab k r g1 g2 hR hin) hc16) = AccMath.accVec (rowF fl tab (wL L).val (2 * t1.val + 1) (2 * k.val)) (offF fl (wL L).val (2 * t1.val + 1) (2 * k.val)) 0 40 :=
      acc_step d L fl tab (wL L).val (2 * t1.val + 1) (2 * k.val) 0 _ hRA ⟨39, by decide⟩ ⟨0, by decide⟩ _ rfl _ hw_v1919_2 _ (k1_off73_form ..) _ hc16
    have s_A0_40 : addf (AccMath.accVec (rowF fl tab (wL L).val (2 * t1.val + 1) (2 * k.val)) (offF fl (wL L).val (2 * t1.val + 1) (2 * k.val)) 0 40) (shapeCast S16 (pair1_last.sl.v1961_2 d L tab k r g1 g2 hR hin) hc16) = AccMath.accVec (rowF fl tab (wL L).val (2 * t1.val + 1) (2 * k.val)) (offF fl (wL L).val (2 * t1.val + 1) (2 * k.val)) 0 41 :=
      acc_step d L fl tab (wL L).val (2 * t1.val + 1) (2 * k.val) 0 _ hRA ⟨40, by decide⟩ ⟨0, by decide⟩ _ rfl _ hw_v1955_2 _ (k1_off74_form ..) _ hc16
    have s_A0_41 : addf (AccMath.accVec (rowF fl tab (wL L).val (2 * t1.val + 1) (2 * k.val)) (offF fl (wL L).val (2 * t1.val + 1) (2 * k.val)) 0 41) (shapeCast S16 (pair1_last.sl.v1997_2 d L tab k r g1 g2 hR hin) hc16) = AccMath.accVec (rowF fl tab (wL L).val (2 * t1.val + 1) (2 * k.val)) (offF fl (wL L).val (2 * t1.val + 1) (2 * k.val)) 0 42 :=
      acc_step d L fl tab (wL L).val (2 * t1.val + 1) (2 * k.val) 0 _ hRA ⟨41, by decide⟩ ⟨0, by decide⟩ _ rfl _ hw_v1991_2 _ (k1_off75_form ..) _ hc16
    have s_A0_42 : addf (AccMath.accVec (rowF fl tab (wL L).val (2 * t1.val + 1) (2 * k.val)) (offF fl (wL L).val (2 * t1.val + 1) (2 * k.val)) 0 42) (shapeCast S16 (pair1_last.sl.v2033_2 d L tab k r g1 g2 hR hin) hc16) = AccMath.accVec (rowF fl tab (wL L).val (2 * t1.val + 1) (2 * k.val)) (offF fl (wL L).val (2 * t1.val + 1) (2 * k.val)) 0 43 :=
      acc_step d L fl tab (wL L).val (2 * t1.val + 1) (2 * k.val) 0 _ hRA ⟨42, by decide⟩ ⟨0, by decide⟩ _ rfl _ hw_v2027_2 _ (k1_off76_form ..) _ hc16
    have s_A0_43 : addf (AccMath.accVec (rowF fl tab (wL L).val (2 * t1.val + 1) (2 * k.val)) (offF fl (wL L).val (2 * t1.val + 1) (2 * k.val)) 0 43) (shapeCast S16 (pair1_last.sl.v2069_2 d L tab k r g1 g2 hR hin) hc16) = AccMath.accVec (rowF fl tab (wL L).val (2 * t1.val + 1) (2 * k.val)) (offF fl (wL L).val (2 * t1.val + 1) (2 * k.val)) 0 44 :=
      acc_step d L fl tab (wL L).val (2 * t1.val + 1) (2 * k.val) 0 _ hRA ⟨43, by decide⟩ ⟨0, by decide⟩ _ rfl _ hw_v2063_2 _ (k1_off77_form ..) _ hc16
    have s_A0_44 : addf (AccMath.accVec (rowF fl tab (wL L).val (2 * t1.val + 1) (2 * k.val)) (offF fl (wL L).val (2 * t1.val + 1) (2 * k.val)) 0 44) (shapeCast S16 (pair1_last.sl.v2105_2 d L tab k r g1 g2 hR hin) hc16) = AccMath.accVec (rowF fl tab (wL L).val (2 * t1.val + 1) (2 * k.val)) (offF fl (wL L).val (2 * t1.val + 1) (2 * k.val)) 0 45 :=
      acc_step d L fl tab (wL L).val (2 * t1.val + 1) (2 * k.val) 0 _ hRA ⟨44, by decide⟩ ⟨0, by decide⟩ _ rfl _ hw_v2099_2 _ (k1_off78_form ..) _ hc16
    have s_A0_45 : addf (AccMath.accVec (rowF fl tab (wL L).val (2 * t1.val + 1) (2 * k.val)) (offF fl (wL L).val (2 * t1.val + 1) (2 * k.val)) 0 45) (shapeCast S16 (pair1_last.sl.v2141_2 d L tab k r g1 g2 hR hin) hc16) = AccMath.accVec (rowF fl tab (wL L).val (2 * t1.val + 1) (2 * k.val)) (offF fl (wL L).val (2 * t1.val + 1) (2 * k.val)) 0 46 :=
      acc_step d L fl tab (wL L).val (2 * t1.val + 1) (2 * k.val) 0 _ hRA ⟨45, by decide⟩ ⟨0, by decide⟩ _ rfl _ hw_v2135_2 _ (k1_off79_form ..) _ hc16
    have s_A0_46 : addf (AccMath.accVec (rowF fl tab (wL L).val (2 * t1.val + 1) (2 * k.val)) (offF fl (wL L).val (2 * t1.val + 1) (2 * k.val)) 0 46) (shapeCast S16 (pair1_last.sl.v2177_2 d L tab k r g1 g2 hR hin) hc16) = AccMath.accVec (rowF fl tab (wL L).val (2 * t1.val + 1) (2 * k.val)) (offF fl (wL L).val (2 * t1.val + 1) (2 * k.val)) 0 47 :=
      acc_step d L fl tab (wL L).val (2 * t1.val + 1) (2 * k.val) 0 _ hRA ⟨46, by decide⟩ ⟨0, by decide⟩ _ rfl _ hw_v2171_2 _ (k1_off80_form ..) _ hc16
    have s_A0_47 : addf (AccMath.accVec (rowF fl tab (wL L).val (2 * t1.val + 1) (2 * k.val)) (offF fl (wL L).val (2 * t1.val + 1) (2 * k.val)) 0 47) (shapeCast S16 (pair1_last.sl.v2213_2 d L tab k r g1 g2 hR hin) hc16) = AccMath.accVec (rowF fl tab (wL L).val (2 * t1.val + 1) (2 * k.val)) (offF fl (wL L).val (2 * t1.val + 1) (2 * k.val)) 0 48 :=
      acc_step d L fl tab (wL L).val (2 * t1.val + 1) (2 * k.val) 0 _ hRA ⟨47, by decide⟩ ⟨0, by decide⟩ _ rfl _ hw_v2207_2 _ (k1_off81_form ..) _ hc16
    have s_A0_48 : addf (AccMath.accVec (rowF fl tab (wL L).val (2 * t1.val + 1) (2 * k.val)) (offF fl (wL L).val (2 * t1.val + 1) (2 * k.val)) 0 48) (shapeCast S16 (pair1_last.sl.v1462 d L tab k r g1 g2 hR hin) hc16) = AccMath.accVec (rowF fl tab (wL L).val (2 * t1.val + 1) (2 * k.val)) (offF fl (wL L).val (2 * t1.val + 1) (2 * k.val)) 0 49 :=
      acc_step d L fl tab (wL L).val (2 * t1.val + 1) (2 * k.val) 0 _ hRA ⟨48, by decide⟩ ⟨0, by decide⟩ _ rfl _ hw_v1456 _ (k1_off83_form ..) _ hc16
    have s_A0_49 : addf (AccMath.accVec (rowF fl tab (wL L).val (2 * t1.val + 1) (2 * k.val)) (offF fl (wL L).val (2 * t1.val + 1) (2 * k.val)) 0 49) (shapeCast S16 (pair1_last.sl.v1496 d L tab k r g1 g2 hR hin) hc16) = AccMath.accVec (rowF fl tab (wL L).val (2 * t1.val + 1) (2 * k.val)) (offF fl (wL L).val (2 * t1.val + 1) (2 * k.val)) 0 50 :=
      acc_step d L fl tab (wL L).val (2 * t1.val + 1) (2 * k.val) 0 _ hRA ⟨49, by decide⟩ ⟨0, by decide⟩ _ rfl _ hw_v1490 _ (k1_off84_form ..) _ hc16
    have hP_A0 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val)) (offF fl (wL L).val (2 * t1.val + 1) (2 * k.val)) 0 0) (shapeCast S16 (pair1_last.sl.v1673 d L tab k r g1 g2 hR hin) hc16)) (shapeCast S16 (pair1_last.sl.v1709 d L tab k r g1 g2 hR hin) hc16)) (shapeCast S16 (pair1_last.sl.v1745 d L tab k r g1 g2 hR hin) hc16)) (shapeCast S16 (pair1_last.sl.v1781 d L tab k r g1 g2 hR hin) hc16)) (shapeCast S16 (pair1_last.sl.v1817 d L tab k r g1 g2 hR hin) hc16)) (shapeCast S16 (pair1_last.sl.v1853 d L tab k r g1 g2 hR hin) hc16)) (shapeCast S16 (pair1_last.sl.v1889 d L tab k r g1 g2 hR hin) hc16)) (shapeCast S16 (pair1_last.sl.v1925 d L tab k r g1 g2 hR hin) hc16)) (shapeCast S16 (pair1_last.sl.v1961 d L tab k r g1 g2 hR hin) hc16)) (shapeCast S16 (pair1_last.sl.v1997 d L tab k r g1 g2 hR hin) hc16)) (shapeCast S16 (pair1_last.sl.v2033 d L tab k r g1 g2 hR hin) hc16)) (shapeCast S16 (pair1_last.sl.v2069 d L tab k r g1 g2 hR hin) hc16)) (shapeCast S16 (pair1_last.sl.v2105 d L tab k r g1 g2 hR hin) hc16)) (shapeCast S16 (pair1_last.sl.v2141 d L tab k r g1 g2 hR hin) hc16)) (shapeCast S16 (pair1_last.sl.v2177 d L tab k r g1 g2 hR hin) hc16)) (shapeCast S16 (pair1_last.sl.v2213 d L tab k r g1 g2 hR hin) hc16)) (shapeCast S16 (pair1_last.sl.v1673_1 d L tab k r g1 g2 hR hin) hc16)) (shapeCast S16 (pair1_last.sl.v1709_1 d L tab k r g1 g2 hR hin) hc16)) (shapeCast S16 (pair1_last.sl.v1745_1 d L tab k r g1 g2 hR hin) hc16)) (shapeCast S16 (pair1_last.sl.v1781_1 d L tab k r g1 g2 hR hin) hc16)) (shapeCast S16 (pair1_last.sl.v1817_1 d L tab k r g1 g2 hR hin) hc16)) (shapeCast S16 (pair1_last.sl.v1853_1 d L tab k r g1 g2 hR hin) hc16)) (shapeCast S16 (pair1_last.sl.v1889_1 d L tab k r g1 g2 hR hin) hc16)) (shapeCast S16 (pair1_last.sl.v1925_1 d L tab k r g1 g2 hR hin) hc16)) (shapeCast S16 (pair1_last.sl.v1961_1 d L tab k r g1 g2 hR hin) hc16)) (shapeCast S16 (pair1_last.sl.v1997_1 d L tab k r g1 g2 hR hin) hc16)) (shapeCast S16 (pair1_last.sl.v2033_1 d L tab k r g1 g2 hR hin) hc16)) (shapeCast S16 (pair1_last.sl.v2069_1 d L tab k r g1 g2 hR hin) hc16)) (shapeCast S16 (pair1_last.sl.v2105_1 d L tab k r g1 g2 hR hin) hc16)) (shapeCast S16 (pair1_last.sl.v2141_1 d L tab k r g1 g2 hR hin) hc16)) (shapeCast S16 (pair1_last.sl.v2177_1 d L tab k r g1 g2 hR hin) hc16)) (shapeCast S16 (pair1_last.sl.v2213_1 d L tab k r g1 g2 hR hin) hc16)) (shapeCast S16 (pair1_last.sl.v1673_2 d L tab k r g1 g2 hR hin) hc16)) (shapeCast S16 (pair1_last.sl.v1709_2 d L tab k r g1 g2 hR hin) hc16)) (shapeCast S16 (pair1_last.sl.v1745_2 d L tab k r g1 g2 hR hin) hc16)) (shapeCast S16 (pair1_last.sl.v1781_2 d L tab k r g1 g2 hR hin) hc16)) (shapeCast S16 (pair1_last.sl.v1817_2 d L tab k r g1 g2 hR hin) hc16)) (shapeCast S16 (pair1_last.sl.v1853_2 d L tab k r g1 g2 hR hin) hc16)) (shapeCast S16 (pair1_last.sl.v1889_2 d L tab k r g1 g2 hR hin) hc16)) (shapeCast S16 (pair1_last.sl.v1925_2 d L tab k r g1 g2 hR hin) hc16)) (shapeCast S16 (pair1_last.sl.v1961_2 d L tab k r g1 g2 hR hin) hc16)) (shapeCast S16 (pair1_last.sl.v1997_2 d L tab k r g1 g2 hR hin) hc16)) (shapeCast S16 (pair1_last.sl.v2033_2 d L tab k r g1 g2 hR hin) hc16)) (shapeCast S16 (pair1_last.sl.v2069_2 d L tab k r g1 g2 hR hin) hc16)) (shapeCast S16 (pair1_last.sl.v2105_2 d L tab k r g1 g2 hR hin) hc16)) (shapeCast S16 (pair1_last.sl.v2141_2 d L tab k r g1 g2 hR hin) hc16)) (shapeCast S16 (pair1_last.sl.v2177_2 d L tab k r g1 g2 hR hin) hc16)) (shapeCast S16 (pair1_last.sl.v2213_2 d L tab k r g1 g2 hR hin) hc16)) (shapeCast S16 (pair1_last.sl.v1462 d L tab k r g1 g2 hR hin) hc16)) (shapeCast S16 (pair1_last.sl.v1496 d L tab k r g1 g2 hR hin) hc16)) hc1 x = Spec.bagPartial fl tab (128 * (wL L).val + 16 * (2 * t1.val + 1) + (2 * k.val)) (16 * 0 + (x 2).val) 50 := fun x => by
      rw [s_A0_0, s_A0_1, s_A0_2, s_A0_3, s_A0_4, s_A0_5, s_A0_6, s_A0_7, s_A0_8, s_A0_9, s_A0_10, s_A0_11, s_A0_12, s_A0_13, s_A0_14, s_A0_15, s_A0_16, s_A0_17, s_A0_18, s_A0_19, s_A0_20, s_A0_21, s_A0_22, s_A0_23, s_A0_24, s_A0_25, s_A0_26, s_A0_27, s_A0_28, s_A0_29, s_A0_30, s_A0_31, s_A0_32, s_A0_33, s_A0_34, s_A0_35, s_A0_36, s_A0_37, s_A0_38, s_A0_39, s_A0_40, s_A0_41, s_A0_42, s_A0_43, s_A0_44, s_A0_45, s_A0_46, s_A0_47, s_A0_48, s_A0_49]
      exact payload_ok fl tab (wL L).val (2 * t1.val + 1) (2 * k.val) ⟨0, by decide⟩ hc1 x
    have s_A1_0 : addf (AccMath.accVec (rowF fl tab (wL L).val (2 * t1.val + 1) (2 * k.val)) (offF fl (wL L).val (2 * t1.val + 1) (2 * k.val)) 1 0) (shapeCast S16 (pair1_last.sl.v1681 d L tab k r g1 g2 hR hin) hc16) = AccMath.accVec (rowF fl tab (wL L).val (2 * t1.val + 1) (2 * k.val)) (offF fl (wL L).val (2 * t1.val + 1) (2 * k.val)) 1 1 :=
      acc_step d L fl tab (wL L).val (2 * t1.val + 1) (2 * k.val) 0 _ hRA ⟨0, by decide⟩ ⟨1, by decide⟩ _ rfl _ hw_v1667 _ (k1_off66_form ..) _ hc16
    have s_A1_1 : addf (AccMath.accVec (rowF fl tab (wL L).val (2 * t1.val + 1) (2 * k.val)) (offF fl (wL L).val (2 * t1.val + 1) (2 * k.val)) 1 1) (shapeCast S16 (pair1_last.sl.v1717 d L tab k r g1 g2 hR hin) hc16) = AccMath.accVec (rowF fl tab (wL L).val (2 * t1.val + 1) (2 * k.val)) (offF fl (wL L).val (2 * t1.val + 1) (2 * k.val)) 1 2 :=
      acc_step d L fl tab (wL L).val (2 * t1.val + 1) (2 * k.val) 0 _ hRA ⟨1, by decide⟩ ⟨1, by decide⟩ _ rfl _ hw_v1703 _ (k1_off67_form ..) _ hc16
    have s_A1_2 : addf (AccMath.accVec (rowF fl tab (wL L).val (2 * t1.val + 1) (2 * k.val)) (offF fl (wL L).val (2 * t1.val + 1) (2 * k.val)) 1 2) (shapeCast S16 (pair1_last.sl.v1753 d L tab k r g1 g2 hR hin) hc16) = AccMath.accVec (rowF fl tab (wL L).val (2 * t1.val + 1) (2 * k.val)) (offF fl (wL L).val (2 * t1.val + 1) (2 * k.val)) 1 3 :=
      acc_step d L fl tab (wL L).val (2 * t1.val + 1) (2 * k.val) 0 _ hRA ⟨2, by decide⟩ ⟨1, by decide⟩ _ rfl _ hw_v1739 _ (k1_off68_form ..) _ hc16
    have s_A1_3 : addf (AccMath.accVec (rowF fl tab (wL L).val (2 * t1.val + 1) (2 * k.val)) (offF fl (wL L).val (2 * t1.val + 1) (2 * k.val)) 1 3) (shapeCast S16 (pair1_last.sl.v1789 d L tab k r g1 g2 hR hin) hc16) = AccMath.accVec (rowF fl tab (wL L).val (2 * t1.val + 1) (2 * k.val)) (offF fl (wL L).val (2 * t1.val + 1) (2 * k.val)) 1 4 :=
      acc_step d L fl tab (wL L).val (2 * t1.val + 1) (2 * k.val) 0 _ hRA ⟨3, by decide⟩ ⟨1, by decide⟩ _ rfl _ hw_v1775 _ (k1_off69_form ..) _ hc16
    have s_A1_4 : addf (AccMath.accVec (rowF fl tab (wL L).val (2 * t1.val + 1) (2 * k.val)) (offF fl (wL L).val (2 * t1.val + 1) (2 * k.val)) 1 4) (shapeCast S16 (pair1_last.sl.v1825 d L tab k r g1 g2 hR hin) hc16) = AccMath.accVec (rowF fl tab (wL L).val (2 * t1.val + 1) (2 * k.val)) (offF fl (wL L).val (2 * t1.val + 1) (2 * k.val)) 1 5 :=
      acc_step d L fl tab (wL L).val (2 * t1.val + 1) (2 * k.val) 0 _ hRA ⟨4, by decide⟩ ⟨1, by decide⟩ _ rfl _ hw_v1811 _ (k1_off70_form ..) _ hc16
    have s_A1_5 : addf (AccMath.accVec (rowF fl tab (wL L).val (2 * t1.val + 1) (2 * k.val)) (offF fl (wL L).val (2 * t1.val + 1) (2 * k.val)) 1 5) (shapeCast S16 (pair1_last.sl.v1861 d L tab k r g1 g2 hR hin) hc16) = AccMath.accVec (rowF fl tab (wL L).val (2 * t1.val + 1) (2 * k.val)) (offF fl (wL L).val (2 * t1.val + 1) (2 * k.val)) 1 6 :=
      acc_step d L fl tab (wL L).val (2 * t1.val + 1) (2 * k.val) 0 _ hRA ⟨5, by decide⟩ ⟨1, by decide⟩ _ rfl _ hw_v1847 _ (k1_off71_form ..) _ hc16
    have s_A1_6 : addf (AccMath.accVec (rowF fl tab (wL L).val (2 * t1.val + 1) (2 * k.val)) (offF fl (wL L).val (2 * t1.val + 1) (2 * k.val)) 1 6) (shapeCast S16 (pair1_last.sl.v1897 d L tab k r g1 g2 hR hin) hc16) = AccMath.accVec (rowF fl tab (wL L).val (2 * t1.val + 1) (2 * k.val)) (offF fl (wL L).val (2 * t1.val + 1) (2 * k.val)) 1 7 :=
      acc_step d L fl tab (wL L).val (2 * t1.val + 1) (2 * k.val) 0 _ hRA ⟨6, by decide⟩ ⟨1, by decide⟩ _ rfl _ hw_v1883 _ (k1_off72_form ..) _ hc16
    have s_A1_7 : addf (AccMath.accVec (rowF fl tab (wL L).val (2 * t1.val + 1) (2 * k.val)) (offF fl (wL L).val (2 * t1.val + 1) (2 * k.val)) 1 7) (shapeCast S16 (pair1_last.sl.v1933 d L tab k r g1 g2 hR hin) hc16) = AccMath.accVec (rowF fl tab (wL L).val (2 * t1.val + 1) (2 * k.val)) (offF fl (wL L).val (2 * t1.val + 1) (2 * k.val)) 1 8 :=
      acc_step d L fl tab (wL L).val (2 * t1.val + 1) (2 * k.val) 0 _ hRA ⟨7, by decide⟩ ⟨1, by decide⟩ _ rfl _ hw_v1919 _ (k1_off73_form ..) _ hc16
    have s_A1_8 : addf (AccMath.accVec (rowF fl tab (wL L).val (2 * t1.val + 1) (2 * k.val)) (offF fl (wL L).val (2 * t1.val + 1) (2 * k.val)) 1 8) (shapeCast S16 (pair1_last.sl.v1969 d L tab k r g1 g2 hR hin) hc16) = AccMath.accVec (rowF fl tab (wL L).val (2 * t1.val + 1) (2 * k.val)) (offF fl (wL L).val (2 * t1.val + 1) (2 * k.val)) 1 9 :=
      acc_step d L fl tab (wL L).val (2 * t1.val + 1) (2 * k.val) 0 _ hRA ⟨8, by decide⟩ ⟨1, by decide⟩ _ rfl _ hw_v1955 _ (k1_off74_form ..) _ hc16
    have s_A1_9 : addf (AccMath.accVec (rowF fl tab (wL L).val (2 * t1.val + 1) (2 * k.val)) (offF fl (wL L).val (2 * t1.val + 1) (2 * k.val)) 1 9) (shapeCast S16 (pair1_last.sl.v2005 d L tab k r g1 g2 hR hin) hc16) = AccMath.accVec (rowF fl tab (wL L).val (2 * t1.val + 1) (2 * k.val)) (offF fl (wL L).val (2 * t1.val + 1) (2 * k.val)) 1 10 :=
      acc_step d L fl tab (wL L).val (2 * t1.val + 1) (2 * k.val) 0 _ hRA ⟨9, by decide⟩ ⟨1, by decide⟩ _ rfl _ hw_v1991 _ (k1_off75_form ..) _ hc16
    have s_A1_10 : addf (AccMath.accVec (rowF fl tab (wL L).val (2 * t1.val + 1) (2 * k.val)) (offF fl (wL L).val (2 * t1.val + 1) (2 * k.val)) 1 10) (shapeCast S16 (pair1_last.sl.v2041 d L tab k r g1 g2 hR hin) hc16) = AccMath.accVec (rowF fl tab (wL L).val (2 * t1.val + 1) (2 * k.val)) (offF fl (wL L).val (2 * t1.val + 1) (2 * k.val)) 1 11 :=
      acc_step d L fl tab (wL L).val (2 * t1.val + 1) (2 * k.val) 0 _ hRA ⟨10, by decide⟩ ⟨1, by decide⟩ _ rfl _ hw_v2027 _ (k1_off76_form ..) _ hc16
    have s_A1_11 : addf (AccMath.accVec (rowF fl tab (wL L).val (2 * t1.val + 1) (2 * k.val)) (offF fl (wL L).val (2 * t1.val + 1) (2 * k.val)) 1 11) (shapeCast S16 (pair1_last.sl.v2077 d L tab k r g1 g2 hR hin) hc16) = AccMath.accVec (rowF fl tab (wL L).val (2 * t1.val + 1) (2 * k.val)) (offF fl (wL L).val (2 * t1.val + 1) (2 * k.val)) 1 12 :=
      acc_step d L fl tab (wL L).val (2 * t1.val + 1) (2 * k.val) 0 _ hRA ⟨11, by decide⟩ ⟨1, by decide⟩ _ rfl _ hw_v2063 _ (k1_off77_form ..) _ hc16
    have s_A1_12 : addf (AccMath.accVec (rowF fl tab (wL L).val (2 * t1.val + 1) (2 * k.val)) (offF fl (wL L).val (2 * t1.val + 1) (2 * k.val)) 1 12) (shapeCast S16 (pair1_last.sl.v2113 d L tab k r g1 g2 hR hin) hc16) = AccMath.accVec (rowF fl tab (wL L).val (2 * t1.val + 1) (2 * k.val)) (offF fl (wL L).val (2 * t1.val + 1) (2 * k.val)) 1 13 :=
      acc_step d L fl tab (wL L).val (2 * t1.val + 1) (2 * k.val) 0 _ hRA ⟨12, by decide⟩ ⟨1, by decide⟩ _ rfl _ hw_v2099 _ (k1_off78_form ..) _ hc16
    have s_A1_13 : addf (AccMath.accVec (rowF fl tab (wL L).val (2 * t1.val + 1) (2 * k.val)) (offF fl (wL L).val (2 * t1.val + 1) (2 * k.val)) 1 13) (shapeCast S16 (pair1_last.sl.v2149 d L tab k r g1 g2 hR hin) hc16) = AccMath.accVec (rowF fl tab (wL L).val (2 * t1.val + 1) (2 * k.val)) (offF fl (wL L).val (2 * t1.val + 1) (2 * k.val)) 1 14 :=
      acc_step d L fl tab (wL L).val (2 * t1.val + 1) (2 * k.val) 0 _ hRA ⟨13, by decide⟩ ⟨1, by decide⟩ _ rfl _ hw_v2135 _ (k1_off79_form ..) _ hc16
    have s_A1_14 : addf (AccMath.accVec (rowF fl tab (wL L).val (2 * t1.val + 1) (2 * k.val)) (offF fl (wL L).val (2 * t1.val + 1) (2 * k.val)) 1 14) (shapeCast S16 (pair1_last.sl.v2185 d L tab k r g1 g2 hR hin) hc16) = AccMath.accVec (rowF fl tab (wL L).val (2 * t1.val + 1) (2 * k.val)) (offF fl (wL L).val (2 * t1.val + 1) (2 * k.val)) 1 15 :=
      acc_step d L fl tab (wL L).val (2 * t1.val + 1) (2 * k.val) 0 _ hRA ⟨14, by decide⟩ ⟨1, by decide⟩ _ rfl _ hw_v2171 _ (k1_off80_form ..) _ hc16
    have s_A1_15 : addf (AccMath.accVec (rowF fl tab (wL L).val (2 * t1.val + 1) (2 * k.val)) (offF fl (wL L).val (2 * t1.val + 1) (2 * k.val)) 1 15) (shapeCast S16 (pair1_last.sl.v2221 d L tab k r g1 g2 hR hin) hc16) = AccMath.accVec (rowF fl tab (wL L).val (2 * t1.val + 1) (2 * k.val)) (offF fl (wL L).val (2 * t1.val + 1) (2 * k.val)) 1 16 :=
      acc_step d L fl tab (wL L).val (2 * t1.val + 1) (2 * k.val) 0 _ hRA ⟨15, by decide⟩ ⟨1, by decide⟩ _ rfl _ hw_v2207 _ (k1_off81_form ..) _ hc16
    have s_A1_16 : addf (AccMath.accVec (rowF fl tab (wL L).val (2 * t1.val + 1) (2 * k.val)) (offF fl (wL L).val (2 * t1.val + 1) (2 * k.val)) 1 16) (shapeCast S16 (pair1_last.sl.v1681_1 d L tab k r g1 g2 hR hin) hc16) = AccMath.accVec (rowF fl tab (wL L).val (2 * t1.val + 1) (2 * k.val)) (offF fl (wL L).val (2 * t1.val + 1) (2 * k.val)) 1 17 :=
      acc_step d L fl tab (wL L).val (2 * t1.val + 1) (2 * k.val) 0 _ hRA ⟨16, by decide⟩ ⟨1, by decide⟩ _ rfl _ hw_v1667_1 _ (k1_off66_form ..) _ hc16
    have s_A1_17 : addf (AccMath.accVec (rowF fl tab (wL L).val (2 * t1.val + 1) (2 * k.val)) (offF fl (wL L).val (2 * t1.val + 1) (2 * k.val)) 1 17) (shapeCast S16 (pair1_last.sl.v1717_1 d L tab k r g1 g2 hR hin) hc16) = AccMath.accVec (rowF fl tab (wL L).val (2 * t1.val + 1) (2 * k.val)) (offF fl (wL L).val (2 * t1.val + 1) (2 * k.val)) 1 18 :=
      acc_step d L fl tab (wL L).val (2 * t1.val + 1) (2 * k.val) 0 _ hRA ⟨17, by decide⟩ ⟨1, by decide⟩ _ rfl _ hw_v1703_1 _ (k1_off67_form ..) _ hc16
    have s_A1_18 : addf (AccMath.accVec (rowF fl tab (wL L).val (2 * t1.val + 1) (2 * k.val)) (offF fl (wL L).val (2 * t1.val + 1) (2 * k.val)) 1 18) (shapeCast S16 (pair1_last.sl.v1753_1 d L tab k r g1 g2 hR hin) hc16) = AccMath.accVec (rowF fl tab (wL L).val (2 * t1.val + 1) (2 * k.val)) (offF fl (wL L).val (2 * t1.val + 1) (2 * k.val)) 1 19 :=
      acc_step d L fl tab (wL L).val (2 * t1.val + 1) (2 * k.val) 0 _ hRA ⟨18, by decide⟩ ⟨1, by decide⟩ _ rfl _ hw_v1739_1 _ (k1_off68_form ..) _ hc16
    have s_A1_19 : addf (AccMath.accVec (rowF fl tab (wL L).val (2 * t1.val + 1) (2 * k.val)) (offF fl (wL L).val (2 * t1.val + 1) (2 * k.val)) 1 19) (shapeCast S16 (pair1_last.sl.v1789_1 d L tab k r g1 g2 hR hin) hc16) = AccMath.accVec (rowF fl tab (wL L).val (2 * t1.val + 1) (2 * k.val)) (offF fl (wL L).val (2 * t1.val + 1) (2 * k.val)) 1 20 :=
      acc_step d L fl tab (wL L).val (2 * t1.val + 1) (2 * k.val) 0 _ hRA ⟨19, by decide⟩ ⟨1, by decide⟩ _ rfl _ hw_v1775_1 _ (k1_off69_form ..) _ hc16
    have s_A1_20 : addf (AccMath.accVec (rowF fl tab (wL L).val (2 * t1.val + 1) (2 * k.val)) (offF fl (wL L).val (2 * t1.val + 1) (2 * k.val)) 1 20) (shapeCast S16 (pair1_last.sl.v1825_1 d L tab k r g1 g2 hR hin) hc16) = AccMath.accVec (rowF fl tab (wL L).val (2 * t1.val + 1) (2 * k.val)) (offF fl (wL L).val (2 * t1.val + 1) (2 * k.val)) 1 21 :=
      acc_step d L fl tab (wL L).val (2 * t1.val + 1) (2 * k.val) 0 _ hRA ⟨20, by decide⟩ ⟨1, by decide⟩ _ rfl _ hw_v1811_1 _ (k1_off70_form ..) _ hc16
    have s_A1_21 : addf (AccMath.accVec (rowF fl tab (wL L).val (2 * t1.val + 1) (2 * k.val)) (offF fl (wL L).val (2 * t1.val + 1) (2 * k.val)) 1 21) (shapeCast S16 (pair1_last.sl.v1861_1 d L tab k r g1 g2 hR hin) hc16) = AccMath.accVec (rowF fl tab (wL L).val (2 * t1.val + 1) (2 * k.val)) (offF fl (wL L).val (2 * t1.val + 1) (2 * k.val)) 1 22 :=
      acc_step d L fl tab (wL L).val (2 * t1.val + 1) (2 * k.val) 0 _ hRA ⟨21, by decide⟩ ⟨1, by decide⟩ _ rfl _ hw_v1847_1 _ (k1_off71_form ..) _ hc16
    have s_A1_22 : addf (AccMath.accVec (rowF fl tab (wL L).val (2 * t1.val + 1) (2 * k.val)) (offF fl (wL L).val (2 * t1.val + 1) (2 * k.val)) 1 22) (shapeCast S16 (pair1_last.sl.v1897_1 d L tab k r g1 g2 hR hin) hc16) = AccMath.accVec (rowF fl tab (wL L).val (2 * t1.val + 1) (2 * k.val)) (offF fl (wL L).val (2 * t1.val + 1) (2 * k.val)) 1 23 :=
      acc_step d L fl tab (wL L).val (2 * t1.val + 1) (2 * k.val) 0 _ hRA ⟨22, by decide⟩ ⟨1, by decide⟩ _ rfl _ hw_v1883_1 _ (k1_off72_form ..) _ hc16
    have s_A1_23 : addf (AccMath.accVec (rowF fl tab (wL L).val (2 * t1.val + 1) (2 * k.val)) (offF fl (wL L).val (2 * t1.val + 1) (2 * k.val)) 1 23) (shapeCast S16 (pair1_last.sl.v1933_1 d L tab k r g1 g2 hR hin) hc16) = AccMath.accVec (rowF fl tab (wL L).val (2 * t1.val + 1) (2 * k.val)) (offF fl (wL L).val (2 * t1.val + 1) (2 * k.val)) 1 24 :=
      acc_step d L fl tab (wL L).val (2 * t1.val + 1) (2 * k.val) 0 _ hRA ⟨23, by decide⟩ ⟨1, by decide⟩ _ rfl _ hw_v1919_1 _ (k1_off73_form ..) _ hc16
    have s_A1_24 : addf (AccMath.accVec (rowF fl tab (wL L).val (2 * t1.val + 1) (2 * k.val)) (offF fl (wL L).val (2 * t1.val + 1) (2 * k.val)) 1 24) (shapeCast S16 (pair1_last.sl.v1969_1 d L tab k r g1 g2 hR hin) hc16) = AccMath.accVec (rowF fl tab (wL L).val (2 * t1.val + 1) (2 * k.val)) (offF fl (wL L).val (2 * t1.val + 1) (2 * k.val)) 1 25 :=
      acc_step d L fl tab (wL L).val (2 * t1.val + 1) (2 * k.val) 0 _ hRA ⟨24, by decide⟩ ⟨1, by decide⟩ _ rfl _ hw_v1955_1 _ (k1_off74_form ..) _ hc16
    have s_A1_25 : addf (AccMath.accVec (rowF fl tab (wL L).val (2 * t1.val + 1) (2 * k.val)) (offF fl (wL L).val (2 * t1.val + 1) (2 * k.val)) 1 25) (shapeCast S16 (pair1_last.sl.v2005_1 d L tab k r g1 g2 hR hin) hc16) = AccMath.accVec (rowF fl tab (wL L).val (2 * t1.val + 1) (2 * k.val)) (offF fl (wL L).val (2 * t1.val + 1) (2 * k.val)) 1 26 :=
      acc_step d L fl tab (wL L).val (2 * t1.val + 1) (2 * k.val) 0 _ hRA ⟨25, by decide⟩ ⟨1, by decide⟩ _ rfl _ hw_v1991_1 _ (k1_off75_form ..) _ hc16
    have s_A1_26 : addf (AccMath.accVec (rowF fl tab (wL L).val (2 * t1.val + 1) (2 * k.val)) (offF fl (wL L).val (2 * t1.val + 1) (2 * k.val)) 1 26) (shapeCast S16 (pair1_last.sl.v2041_1 d L tab k r g1 g2 hR hin) hc16) = AccMath.accVec (rowF fl tab (wL L).val (2 * t1.val + 1) (2 * k.val)) (offF fl (wL L).val (2 * t1.val + 1) (2 * k.val)) 1 27 :=
      acc_step d L fl tab (wL L).val (2 * t1.val + 1) (2 * k.val) 0 _ hRA ⟨26, by decide⟩ ⟨1, by decide⟩ _ rfl _ hw_v2027_1 _ (k1_off76_form ..) _ hc16
    have s_A1_27 : addf (AccMath.accVec (rowF fl tab (wL L).val (2 * t1.val + 1) (2 * k.val)) (offF fl (wL L).val (2 * t1.val + 1) (2 * k.val)) 1 27) (shapeCast S16 (pair1_last.sl.v2077_1 d L tab k r g1 g2 hR hin) hc16) = AccMath.accVec (rowF fl tab (wL L).val (2 * t1.val + 1) (2 * k.val)) (offF fl (wL L).val (2 * t1.val + 1) (2 * k.val)) 1 28 :=
      acc_step d L fl tab (wL L).val (2 * t1.val + 1) (2 * k.val) 0 _ hRA ⟨27, by decide⟩ ⟨1, by decide⟩ _ rfl _ hw_v2063_1 _ (k1_off77_form ..) _ hc16
    have s_A1_28 : addf (AccMath.accVec (rowF fl tab (wL L).val (2 * t1.val + 1) (2 * k.val)) (offF fl (wL L).val (2 * t1.val + 1) (2 * k.val)) 1 28) (shapeCast S16 (pair1_last.sl.v2113_1 d L tab k r g1 g2 hR hin) hc16) = AccMath.accVec (rowF fl tab (wL L).val (2 * t1.val + 1) (2 * k.val)) (offF fl (wL L).val (2 * t1.val + 1) (2 * k.val)) 1 29 :=
      acc_step d L fl tab (wL L).val (2 * t1.val + 1) (2 * k.val) 0 _ hRA ⟨28, by decide⟩ ⟨1, by decide⟩ _ rfl _ hw_v2099_1 _ (k1_off78_form ..) _ hc16
    have s_A1_29 : addf (AccMath.accVec (rowF fl tab (wL L).val (2 * t1.val + 1) (2 * k.val)) (offF fl (wL L).val (2 * t1.val + 1) (2 * k.val)) 1 29) (shapeCast S16 (pair1_last.sl.v2149_1 d L tab k r g1 g2 hR hin) hc16) = AccMath.accVec (rowF fl tab (wL L).val (2 * t1.val + 1) (2 * k.val)) (offF fl (wL L).val (2 * t1.val + 1) (2 * k.val)) 1 30 :=
      acc_step d L fl tab (wL L).val (2 * t1.val + 1) (2 * k.val) 0 _ hRA ⟨29, by decide⟩ ⟨1, by decide⟩ _ rfl _ hw_v2135_1 _ (k1_off79_form ..) _ hc16
    have s_A1_30 : addf (AccMath.accVec (rowF fl tab (wL L).val (2 * t1.val + 1) (2 * k.val)) (offF fl (wL L).val (2 * t1.val + 1) (2 * k.val)) 1 30) (shapeCast S16 (pair1_last.sl.v2185_1 d L tab k r g1 g2 hR hin) hc16) = AccMath.accVec (rowF fl tab (wL L).val (2 * t1.val + 1) (2 * k.val)) (offF fl (wL L).val (2 * t1.val + 1) (2 * k.val)) 1 31 :=
      acc_step d L fl tab (wL L).val (2 * t1.val + 1) (2 * k.val) 0 _ hRA ⟨30, by decide⟩ ⟨1, by decide⟩ _ rfl _ hw_v2171_1 _ (k1_off80_form ..) _ hc16
    have s_A1_31 : addf (AccMath.accVec (rowF fl tab (wL L).val (2 * t1.val + 1) (2 * k.val)) (offF fl (wL L).val (2 * t1.val + 1) (2 * k.val)) 1 31) (shapeCast S16 (pair1_last.sl.v2221_1 d L tab k r g1 g2 hR hin) hc16) = AccMath.accVec (rowF fl tab (wL L).val (2 * t1.val + 1) (2 * k.val)) (offF fl (wL L).val (2 * t1.val + 1) (2 * k.val)) 1 32 :=
      acc_step d L fl tab (wL L).val (2 * t1.val + 1) (2 * k.val) 0 _ hRA ⟨31, by decide⟩ ⟨1, by decide⟩ _ rfl _ hw_v2207_1 _ (k1_off81_form ..) _ hc16
    have s_A1_32 : addf (AccMath.accVec (rowF fl tab (wL L).val (2 * t1.val + 1) (2 * k.val)) (offF fl (wL L).val (2 * t1.val + 1) (2 * k.val)) 1 32) (shapeCast S16 (pair1_last.sl.v1681_2 d L tab k r g1 g2 hR hin) hc16) = AccMath.accVec (rowF fl tab (wL L).val (2 * t1.val + 1) (2 * k.val)) (offF fl (wL L).val (2 * t1.val + 1) (2 * k.val)) 1 33 :=
      acc_step d L fl tab (wL L).val (2 * t1.val + 1) (2 * k.val) 0 _ hRA ⟨32, by decide⟩ ⟨1, by decide⟩ _ rfl _ hw_v1667_2 _ (k1_off66_form ..) _ hc16
    have s_A1_33 : addf (AccMath.accVec (rowF fl tab (wL L).val (2 * t1.val + 1) (2 * k.val)) (offF fl (wL L).val (2 * t1.val + 1) (2 * k.val)) 1 33) (shapeCast S16 (pair1_last.sl.v1717_2 d L tab k r g1 g2 hR hin) hc16) = AccMath.accVec (rowF fl tab (wL L).val (2 * t1.val + 1) (2 * k.val)) (offF fl (wL L).val (2 * t1.val + 1) (2 * k.val)) 1 34 :=
      acc_step d L fl tab (wL L).val (2 * t1.val + 1) (2 * k.val) 0 _ hRA ⟨33, by decide⟩ ⟨1, by decide⟩ _ rfl _ hw_v1703_2 _ (k1_off67_form ..) _ hc16
    have s_A1_34 : addf (AccMath.accVec (rowF fl tab (wL L).val (2 * t1.val + 1) (2 * k.val)) (offF fl (wL L).val (2 * t1.val + 1) (2 * k.val)) 1 34) (shapeCast S16 (pair1_last.sl.v1753_2 d L tab k r g1 g2 hR hin) hc16) = AccMath.accVec (rowF fl tab (wL L).val (2 * t1.val + 1) (2 * k.val)) (offF fl (wL L).val (2 * t1.val + 1) (2 * k.val)) 1 35 :=
      acc_step d L fl tab (wL L).val (2 * t1.val + 1) (2 * k.val) 0 _ hRA ⟨34, by decide⟩ ⟨1, by decide⟩ _ rfl _ hw_v1739_2 _ (k1_off68_form ..) _ hc16
    have s_A1_35 : addf (AccMath.accVec (rowF fl tab (wL L).val (2 * t1.val + 1) (2 * k.val)) (offF fl (wL L).val (2 * t1.val + 1) (2 * k.val)) 1 35) (shapeCast S16 (pair1_last.sl.v1789_2 d L tab k r g1 g2 hR hin) hc16) = AccMath.accVec (rowF fl tab (wL L).val (2 * t1.val + 1) (2 * k.val)) (offF fl (wL L).val (2 * t1.val + 1) (2 * k.val)) 1 36 :=
      acc_step d L fl tab (wL L).val (2 * t1.val + 1) (2 * k.val) 0 _ hRA ⟨35, by decide⟩ ⟨1, by decide⟩ _ rfl _ hw_v1775_2 _ (k1_off69_form ..) _ hc16
    have s_A1_36 : addf (AccMath.accVec (rowF fl tab (wL L).val (2 * t1.val + 1) (2 * k.val)) (offF fl (wL L).val (2 * t1.val + 1) (2 * k.val)) 1 36) (shapeCast S16 (pair1_last.sl.v1825_2 d L tab k r g1 g2 hR hin) hc16) = AccMath.accVec (rowF fl tab (wL L).val (2 * t1.val + 1) (2 * k.val)) (offF fl (wL L).val (2 * t1.val + 1) (2 * k.val)) 1 37 :=
      acc_step d L fl tab (wL L).val (2 * t1.val + 1) (2 * k.val) 0 _ hRA ⟨36, by decide⟩ ⟨1, by decide⟩ _ rfl _ hw_v1811_2 _ (k1_off70_form ..) _ hc16
    have s_A1_37 : addf (AccMath.accVec (rowF fl tab (wL L).val (2 * t1.val + 1) (2 * k.val)) (offF fl (wL L).val (2 * t1.val + 1) (2 * k.val)) 1 37) (shapeCast S16 (pair1_last.sl.v1861_2 d L tab k r g1 g2 hR hin) hc16) = AccMath.accVec (rowF fl tab (wL L).val (2 * t1.val + 1) (2 * k.val)) (offF fl (wL L).val (2 * t1.val + 1) (2 * k.val)) 1 38 :=
      acc_step d L fl tab (wL L).val (2 * t1.val + 1) (2 * k.val) 0 _ hRA ⟨37, by decide⟩ ⟨1, by decide⟩ _ rfl _ hw_v1847_2 _ (k1_off71_form ..) _ hc16
    have s_A1_38 : addf (AccMath.accVec (rowF fl tab (wL L).val (2 * t1.val + 1) (2 * k.val)) (offF fl (wL L).val (2 * t1.val + 1) (2 * k.val)) 1 38) (shapeCast S16 (pair1_last.sl.v1897_2 d L tab k r g1 g2 hR hin) hc16) = AccMath.accVec (rowF fl tab (wL L).val (2 * t1.val + 1) (2 * k.val)) (offF fl (wL L).val (2 * t1.val + 1) (2 * k.val)) 1 39 :=
      acc_step d L fl tab (wL L).val (2 * t1.val + 1) (2 * k.val) 0 _ hRA ⟨38, by decide⟩ ⟨1, by decide⟩ _ rfl _ hw_v1883_2 _ (k1_off72_form ..) _ hc16
    have s_A1_39 : addf (AccMath.accVec (rowF fl tab (wL L).val (2 * t1.val + 1) (2 * k.val)) (offF fl (wL L).val (2 * t1.val + 1) (2 * k.val)) 1 39) (shapeCast S16 (pair1_last.sl.v1933_2 d L tab k r g1 g2 hR hin) hc16) = AccMath.accVec (rowF fl tab (wL L).val (2 * t1.val + 1) (2 * k.val)) (offF fl (wL L).val (2 * t1.val + 1) (2 * k.val)) 1 40 :=
      acc_step d L fl tab (wL L).val (2 * t1.val + 1) (2 * k.val) 0 _ hRA ⟨39, by decide⟩ ⟨1, by decide⟩ _ rfl _ hw_v1919_2 _ (k1_off73_form ..) _ hc16
    have s_A1_40 : addf (AccMath.accVec (rowF fl tab (wL L).val (2 * t1.val + 1) (2 * k.val)) (offF fl (wL L).val (2 * t1.val + 1) (2 * k.val)) 1 40) (shapeCast S16 (pair1_last.sl.v1969_2 d L tab k r g1 g2 hR hin) hc16) = AccMath.accVec (rowF fl tab (wL L).val (2 * t1.val + 1) (2 * k.val)) (offF fl (wL L).val (2 * t1.val + 1) (2 * k.val)) 1 41 :=
      acc_step d L fl tab (wL L).val (2 * t1.val + 1) (2 * k.val) 0 _ hRA ⟨40, by decide⟩ ⟨1, by decide⟩ _ rfl _ hw_v1955_2 _ (k1_off74_form ..) _ hc16
    have s_A1_41 : addf (AccMath.accVec (rowF fl tab (wL L).val (2 * t1.val + 1) (2 * k.val)) (offF fl (wL L).val (2 * t1.val + 1) (2 * k.val)) 1 41) (shapeCast S16 (pair1_last.sl.v2005_2 d L tab k r g1 g2 hR hin) hc16) = AccMath.accVec (rowF fl tab (wL L).val (2 * t1.val + 1) (2 * k.val)) (offF fl (wL L).val (2 * t1.val + 1) (2 * k.val)) 1 42 :=
      acc_step d L fl tab (wL L).val (2 * t1.val + 1) (2 * k.val) 0 _ hRA ⟨41, by decide⟩ ⟨1, by decide⟩ _ rfl _ hw_v1991_2 _ (k1_off75_form ..) _ hc16
    have s_A1_42 : addf (AccMath.accVec (rowF fl tab (wL L).val (2 * t1.val + 1) (2 * k.val)) (offF fl (wL L).val (2 * t1.val + 1) (2 * k.val)) 1 42) (shapeCast S16 (pair1_last.sl.v2041_2 d L tab k r g1 g2 hR hin) hc16) = AccMath.accVec (rowF fl tab (wL L).val (2 * t1.val + 1) (2 * k.val)) (offF fl (wL L).val (2 * t1.val + 1) (2 * k.val)) 1 43 :=
      acc_step d L fl tab (wL L).val (2 * t1.val + 1) (2 * k.val) 0 _ hRA ⟨42, by decide⟩ ⟨1, by decide⟩ _ rfl _ hw_v2027_2 _ (k1_off76_form ..) _ hc16
    have s_A1_43 : addf (AccMath.accVec (rowF fl tab (wL L).val (2 * t1.val + 1) (2 * k.val)) (offF fl (wL L).val (2 * t1.val + 1) (2 * k.val)) 1 43) (shapeCast S16 (pair1_last.sl.v2077_2 d L tab k r g1 g2 hR hin) hc16) = AccMath.accVec (rowF fl tab (wL L).val (2 * t1.val + 1) (2 * k.val)) (offF fl (wL L).val (2 * t1.val + 1) (2 * k.val)) 1 44 :=
      acc_step d L fl tab (wL L).val (2 * t1.val + 1) (2 * k.val) 0 _ hRA ⟨43, by decide⟩ ⟨1, by decide⟩ _ rfl _ hw_v2063_2 _ (k1_off77_form ..) _ hc16
    have s_A1_44 : addf (AccMath.accVec (rowF fl tab (wL L).val (2 * t1.val + 1) (2 * k.val)) (offF fl (wL L).val (2 * t1.val + 1) (2 * k.val)) 1 44) (shapeCast S16 (pair1_last.sl.v2113_2 d L tab k r g1 g2 hR hin) hc16) = AccMath.accVec (rowF fl tab (wL L).val (2 * t1.val + 1) (2 * k.val)) (offF fl (wL L).val (2 * t1.val + 1) (2 * k.val)) 1 45 :=
      acc_step d L fl tab (wL L).val (2 * t1.val + 1) (2 * k.val) 0 _ hRA ⟨44, by decide⟩ ⟨1, by decide⟩ _ rfl _ hw_v2099_2 _ (k1_off78_form ..) _ hc16
    have s_A1_45 : addf (AccMath.accVec (rowF fl tab (wL L).val (2 * t1.val + 1) (2 * k.val)) (offF fl (wL L).val (2 * t1.val + 1) (2 * k.val)) 1 45) (shapeCast S16 (pair1_last.sl.v2149_2 d L tab k r g1 g2 hR hin) hc16) = AccMath.accVec (rowF fl tab (wL L).val (2 * t1.val + 1) (2 * k.val)) (offF fl (wL L).val (2 * t1.val + 1) (2 * k.val)) 1 46 :=
      acc_step d L fl tab (wL L).val (2 * t1.val + 1) (2 * k.val) 0 _ hRA ⟨45, by decide⟩ ⟨1, by decide⟩ _ rfl _ hw_v2135_2 _ (k1_off79_form ..) _ hc16
    have s_A1_46 : addf (AccMath.accVec (rowF fl tab (wL L).val (2 * t1.val + 1) (2 * k.val)) (offF fl (wL L).val (2 * t1.val + 1) (2 * k.val)) 1 46) (shapeCast S16 (pair1_last.sl.v2185_2 d L tab k r g1 g2 hR hin) hc16) = AccMath.accVec (rowF fl tab (wL L).val (2 * t1.val + 1) (2 * k.val)) (offF fl (wL L).val (2 * t1.val + 1) (2 * k.val)) 1 47 :=
      acc_step d L fl tab (wL L).val (2 * t1.val + 1) (2 * k.val) 0 _ hRA ⟨46, by decide⟩ ⟨1, by decide⟩ _ rfl _ hw_v2171_2 _ (k1_off80_form ..) _ hc16
    have s_A1_47 : addf (AccMath.accVec (rowF fl tab (wL L).val (2 * t1.val + 1) (2 * k.val)) (offF fl (wL L).val (2 * t1.val + 1) (2 * k.val)) 1 47) (shapeCast S16 (pair1_last.sl.v2221_2 d L tab k r g1 g2 hR hin) hc16) = AccMath.accVec (rowF fl tab (wL L).val (2 * t1.val + 1) (2 * k.val)) (offF fl (wL L).val (2 * t1.val + 1) (2 * k.val)) 1 48 :=
      acc_step d L fl tab (wL L).val (2 * t1.val + 1) (2 * k.val) 0 _ hRA ⟨47, by decide⟩ ⟨1, by decide⟩ _ rfl _ hw_v2207_2 _ (k1_off81_form ..) _ hc16
    have s_A1_48 : addf (AccMath.accVec (rowF fl tab (wL L).val (2 * t1.val + 1) (2 * k.val)) (offF fl (wL L).val (2 * t1.val + 1) (2 * k.val)) 1 48) (shapeCast S16 (pair1_last.sl.v1470 d L tab k r g1 g2 hR hin) hc16) = AccMath.accVec (rowF fl tab (wL L).val (2 * t1.val + 1) (2 * k.val)) (offF fl (wL L).val (2 * t1.val + 1) (2 * k.val)) 1 49 :=
      acc_step d L fl tab (wL L).val (2 * t1.val + 1) (2 * k.val) 0 _ hRA ⟨48, by decide⟩ ⟨1, by decide⟩ _ rfl _ hw_v1456 _ (k1_off83_form ..) _ hc16
    have s_A1_49 : addf (AccMath.accVec (rowF fl tab (wL L).val (2 * t1.val + 1) (2 * k.val)) (offF fl (wL L).val (2 * t1.val + 1) (2 * k.val)) 1 49) (shapeCast S16 (pair1_last.sl.v1504 d L tab k r g1 g2 hR hin) hc16) = AccMath.accVec (rowF fl tab (wL L).val (2 * t1.val + 1) (2 * k.val)) (offF fl (wL L).val (2 * t1.val + 1) (2 * k.val)) 1 50 :=
      acc_step d L fl tab (wL L).val (2 * t1.val + 1) (2 * k.val) 0 _ hRA ⟨49, by decide⟩ ⟨1, by decide⟩ _ rfl _ hw_v1490 _ (k1_off84_form ..) _ hc16
    have hP_A1 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val)) (offF fl (wL L).val (2 * t1.val + 1) (2 * k.val)) 1 0) (shapeCast S16 (pair1_last.sl.v1681 d L tab k r g1 g2 hR hin) hc16)) (shapeCast S16 (pair1_last.sl.v1717 d L tab k r g1 g2 hR hin) hc16)) (shapeCast S16 (pair1_last.sl.v1753 d L tab k r g1 g2 hR hin) hc16)) (shapeCast S16 (pair1_last.sl.v1789 d L tab k r g1 g2 hR hin) hc16)) (shapeCast S16 (pair1_last.sl.v1825 d L tab k r g1 g2 hR hin) hc16)) (shapeCast S16 (pair1_last.sl.v1861 d L tab k r g1 g2 hR hin) hc16)) (shapeCast S16 (pair1_last.sl.v1897 d L tab k r g1 g2 hR hin) hc16)) (shapeCast S16 (pair1_last.sl.v1933 d L tab k r g1 g2 hR hin) hc16)) (shapeCast S16 (pair1_last.sl.v1969 d L tab k r g1 g2 hR hin) hc16)) (shapeCast S16 (pair1_last.sl.v2005 d L tab k r g1 g2 hR hin) hc16)) (shapeCast S16 (pair1_last.sl.v2041 d L tab k r g1 g2 hR hin) hc16)) (shapeCast S16 (pair1_last.sl.v2077 d L tab k r g1 g2 hR hin) hc16)) (shapeCast S16 (pair1_last.sl.v2113 d L tab k r g1 g2 hR hin) hc16)) (shapeCast S16 (pair1_last.sl.v2149 d L tab k r g1 g2 hR hin) hc16)) (shapeCast S16 (pair1_last.sl.v2185 d L tab k r g1 g2 hR hin) hc16)) (shapeCast S16 (pair1_last.sl.v2221 d L tab k r g1 g2 hR hin) hc16)) (shapeCast S16 (pair1_last.sl.v1681_1 d L tab k r g1 g2 hR hin) hc16)) (shapeCast S16 (pair1_last.sl.v1717_1 d L tab k r g1 g2 hR hin) hc16)) (shapeCast S16 (pair1_last.sl.v1753_1 d L tab k r g1 g2 hR hin) hc16)) (shapeCast S16 (pair1_last.sl.v1789_1 d L tab k r g1 g2 hR hin) hc16)) (shapeCast S16 (pair1_last.sl.v1825_1 d L tab k r g1 g2 hR hin) hc16)) (shapeCast S16 (pair1_last.sl.v1861_1 d L tab k r g1 g2 hR hin) hc16)) (shapeCast S16 (pair1_last.sl.v1897_1 d L tab k r g1 g2 hR hin) hc16)) (shapeCast S16 (pair1_last.sl.v1933_1 d L tab k r g1 g2 hR hin) hc16)) (shapeCast S16 (pair1_last.sl.v1969_1 d L tab k r g1 g2 hR hin) hc16)) (shapeCast S16 (pair1_last.sl.v2005_1 d L tab k r g1 g2 hR hin) hc16)) (shapeCast S16 (pair1_last.sl.v2041_1 d L tab k r g1 g2 hR hin) hc16)) (shapeCast S16 (pair1_last.sl.v2077_1 d L tab k r g1 g2 hR hin) hc16)) (shapeCast S16 (pair1_last.sl.v2113_1 d L tab k r g1 g2 hR hin) hc16)) (shapeCast S16 (pair1_last.sl.v2149_1 d L tab k r g1 g2 hR hin) hc16)) (shapeCast S16 (pair1_last.sl.v2185_1 d L tab k r g1 g2 hR hin) hc16)) (shapeCast S16 (pair1_last.sl.v2221_1 d L tab k r g1 g2 hR hin) hc16)) (shapeCast S16 (pair1_last.sl.v1681_2 d L tab k r g1 g2 hR hin) hc16)) (shapeCast S16 (pair1_last.sl.v1717_2 d L tab k r g1 g2 hR hin) hc16)) (shapeCast S16 (pair1_last.sl.v1753_2 d L tab k r g1 g2 hR hin) hc16)) (shapeCast S16 (pair1_last.sl.v1789_2 d L tab k r g1 g2 hR hin) hc16)) (shapeCast S16 (pair1_last.sl.v1825_2 d L tab k r g1 g2 hR hin) hc16)) (shapeCast S16 (pair1_last.sl.v1861_2 d L tab k r g1 g2 hR hin) hc16)) (shapeCast S16 (pair1_last.sl.v1897_2 d L tab k r g1 g2 hR hin) hc16)) (shapeCast S16 (pair1_last.sl.v1933_2 d L tab k r g1 g2 hR hin) hc16)) (shapeCast S16 (pair1_last.sl.v1969_2 d L tab k r g1 g2 hR hin) hc16)) (shapeCast S16 (pair1_last.sl.v2005_2 d L tab k r g1 g2 hR hin) hc16)) (shapeCast S16 (pair1_last.sl.v2041_2 d L tab k r g1 g2 hR hin) hc16)) (shapeCast S16 (pair1_last.sl.v2077_2 d L tab k r g1 g2 hR hin) hc16)) (shapeCast S16 (pair1_last.sl.v2113_2 d L tab k r g1 g2 hR hin) hc16)) (shapeCast S16 (pair1_last.sl.v2149_2 d L tab k r g1 g2 hR hin) hc16)) (shapeCast S16 (pair1_last.sl.v2185_2 d L tab k r g1 g2 hR hin) hc16)) (shapeCast S16 (pair1_last.sl.v2221_2 d L tab k r g1 g2 hR hin) hc16)) (shapeCast S16 (pair1_last.sl.v1470 d L tab k r g1 g2 hR hin) hc16)) (shapeCast S16 (pair1_last.sl.v1504 d L tab k r g1 g2 hR hin) hc16)) hc1 x = Spec.bagPartial fl tab (128 * (wL L).val + 16 * (2 * t1.val + 1) + (2 * k.val)) (16 * 1 + (x 2).val) 50 := fun x => by
      rw [s_A1_0, s_A1_1, s_A1_2, s_A1_3, s_A1_4, s_A1_5, s_A1_6, s_A1_7, s_A1_8, s_A1_9, s_A1_10, s_A1_11, s_A1_12, s_A1_13, s_A1_14, s_A1_15, s_A1_16, s_A1_17, s_A1_18, s_A1_19, s_A1_20, s_A1_21, s_A1_22, s_A1_23, s_A1_24, s_A1_25, s_A1_26, s_A1_27, s_A1_28, s_A1_29, s_A1_30, s_A1_31, s_A1_32, s_A1_33, s_A1_34, s_A1_35, s_A1_36, s_A1_37, s_A1_38, s_A1_39, s_A1_40, s_A1_41, s_A1_42, s_A1_43, s_A1_44, s_A1_45, s_A1_46, s_A1_47, s_A1_48, s_A1_49]
      exact payload_ok fl tab (wL L).val (2 * t1.val + 1) (2 * k.val) ⟨1, by decide⟩ hc1 x
    have s_A2_0 : addf (AccMath.accVec (rowF fl tab (wL L).val (2 * t1.val + 1) (2 * k.val)) (offF fl (wL L).val (2 * t1.val + 1) (2 * k.val)) 2 0) (shapeCast S16 (pair1_last.sl.v1689 d L tab k r g1 g2 hR hin) hc16) = AccMath.accVec (rowF fl tab (wL L).val (2 * t1.val + 1) (2 * k.val)) (offF fl (wL L).val (2 * t1.val + 1) (2 * k.val)) 2 1 :=
      acc_step d L fl tab (wL L).val (2 * t1.val + 1) (2 * k.val) 0 _ hRA ⟨0, by decide⟩ ⟨2, by decide⟩ _ rfl _ hw_v1667 _ (k1_off66_form ..) _ hc16
    have s_A2_1 : addf (AccMath.accVec (rowF fl tab (wL L).val (2 * t1.val + 1) (2 * k.val)) (offF fl (wL L).val (2 * t1.val + 1) (2 * k.val)) 2 1) (shapeCast S16 (pair1_last.sl.v1725 d L tab k r g1 g2 hR hin) hc16) = AccMath.accVec (rowF fl tab (wL L).val (2 * t1.val + 1) (2 * k.val)) (offF fl (wL L).val (2 * t1.val + 1) (2 * k.val)) 2 2 :=
      acc_step d L fl tab (wL L).val (2 * t1.val + 1) (2 * k.val) 0 _ hRA ⟨1, by decide⟩ ⟨2, by decide⟩ _ rfl _ hw_v1703 _ (k1_off67_form ..) _ hc16
    have s_A2_2 : addf (AccMath.accVec (rowF fl tab (wL L).val (2 * t1.val + 1) (2 * k.val)) (offF fl (wL L).val (2 * t1.val + 1) (2 * k.val)) 2 2) (shapeCast S16 (pair1_last.sl.v1761 d L tab k r g1 g2 hR hin) hc16) = AccMath.accVec (rowF fl tab (wL L).val (2 * t1.val + 1) (2 * k.val)) (offF fl (wL L).val (2 * t1.val + 1) (2 * k.val)) 2 3 :=
      acc_step d L fl tab (wL L).val (2 * t1.val + 1) (2 * k.val) 0 _ hRA ⟨2, by decide⟩ ⟨2, by decide⟩ _ rfl _ hw_v1739 _ (k1_off68_form ..) _ hc16
    have s_A2_3 : addf (AccMath.accVec (rowF fl tab (wL L).val (2 * t1.val + 1) (2 * k.val)) (offF fl (wL L).val (2 * t1.val + 1) (2 * k.val)) 2 3) (shapeCast S16 (pair1_last.sl.v1797 d L tab k r g1 g2 hR hin) hc16) = AccMath.accVec (rowF fl tab (wL L).val (2 * t1.val + 1) (2 * k.val)) (offF fl (wL L).val (2 * t1.val + 1) (2 * k.val)) 2 4 :=
      acc_step d L fl tab (wL L).val (2 * t1.val + 1) (2 * k.val) 0 _ hRA ⟨3, by decide⟩ ⟨2, by decide⟩ _ rfl _ hw_v1775 _ (k1_off69_form ..) _ hc16
    have s_A2_4 : addf (AccMath.accVec (rowF fl tab (wL L).val (2 * t1.val + 1) (2 * k.val)) (offF fl (wL L).val (2 * t1.val + 1) (2 * k.val)) 2 4) (shapeCast S16 (pair1_last.sl.v1833 d L tab k r g1 g2 hR hin) hc16) = AccMath.accVec (rowF fl tab (wL L).val (2 * t1.val + 1) (2 * k.val)) (offF fl (wL L).val (2 * t1.val + 1) (2 * k.val)) 2 5 :=
      acc_step d L fl tab (wL L).val (2 * t1.val + 1) (2 * k.val) 0 _ hRA ⟨4, by decide⟩ ⟨2, by decide⟩ _ rfl _ hw_v1811 _ (k1_off70_form ..) _ hc16
    have s_A2_5 : addf (AccMath.accVec (rowF fl tab (wL L).val (2 * t1.val + 1) (2 * k.val)) (offF fl (wL L).val (2 * t1.val + 1) (2 * k.val)) 2 5) (shapeCast S16 (pair1_last.sl.v1869 d L tab k r g1 g2 hR hin) hc16) = AccMath.accVec (rowF fl tab (wL L).val (2 * t1.val + 1) (2 * k.val)) (offF fl (wL L).val (2 * t1.val + 1) (2 * k.val)) 2 6 :=
      acc_step d L fl tab (wL L).val (2 * t1.val + 1) (2 * k.val) 0 _ hRA ⟨5, by decide⟩ ⟨2, by decide⟩ _ rfl _ hw_v1847 _ (k1_off71_form ..) _ hc16
    have s_A2_6 : addf (AccMath.accVec (rowF fl tab (wL L).val (2 * t1.val + 1) (2 * k.val)) (offF fl (wL L).val (2 * t1.val + 1) (2 * k.val)) 2 6) (shapeCast S16 (pair1_last.sl.v1905 d L tab k r g1 g2 hR hin) hc16) = AccMath.accVec (rowF fl tab (wL L).val (2 * t1.val + 1) (2 * k.val)) (offF fl (wL L).val (2 * t1.val + 1) (2 * k.val)) 2 7 :=
      acc_step d L fl tab (wL L).val (2 * t1.val + 1) (2 * k.val) 0 _ hRA ⟨6, by decide⟩ ⟨2, by decide⟩ _ rfl _ hw_v1883 _ (k1_off72_form ..) _ hc16
    have s_A2_7 : addf (AccMath.accVec (rowF fl tab (wL L).val (2 * t1.val + 1) (2 * k.val)) (offF fl (wL L).val (2 * t1.val + 1) (2 * k.val)) 2 7) (shapeCast S16 (pair1_last.sl.v1941 d L tab k r g1 g2 hR hin) hc16) = AccMath.accVec (rowF fl tab (wL L).val (2 * t1.val + 1) (2 * k.val)) (offF fl (wL L).val (2 * t1.val + 1) (2 * k.val)) 2 8 :=
      acc_step d L fl tab (wL L).val (2 * t1.val + 1) (2 * k.val) 0 _ hRA ⟨7, by decide⟩ ⟨2, by decide⟩ _ rfl _ hw_v1919 _ (k1_off73_form ..) _ hc16
    have s_A2_8 : addf (AccMath.accVec (rowF fl tab (wL L).val (2 * t1.val + 1) (2 * k.val)) (offF fl (wL L).val (2 * t1.val + 1) (2 * k.val)) 2 8) (shapeCast S16 (pair1_last.sl.v1977 d L tab k r g1 g2 hR hin) hc16) = AccMath.accVec (rowF fl tab (wL L).val (2 * t1.val + 1) (2 * k.val)) (offF fl (wL L).val (2 * t1.val + 1) (2 * k.val)) 2 9 :=
      acc_step d L fl tab (wL L).val (2 * t1.val + 1) (2 * k.val) 0 _ hRA ⟨8, by decide⟩ ⟨2, by decide⟩ _ rfl _ hw_v1955 _ (k1_off74_form ..) _ hc16
    have s_A2_9 : addf (AccMath.accVec (rowF fl tab (wL L).val (2 * t1.val + 1) (2 * k.val)) (offF fl (wL L).val (2 * t1.val + 1) (2 * k.val)) 2 9) (shapeCast S16 (pair1_last.sl.v2013 d L tab k r g1 g2 hR hin) hc16) = AccMath.accVec (rowF fl tab (wL L).val (2 * t1.val + 1) (2 * k.val)) (offF fl (wL L).val (2 * t1.val + 1) (2 * k.val)) 2 10 :=
      acc_step d L fl tab (wL L).val (2 * t1.val + 1) (2 * k.val) 0 _ hRA ⟨9, by decide⟩ ⟨2, by decide⟩ _ rfl _ hw_v1991 _ (k1_off75_form ..) _ hc16
    have s_A2_10 : addf (AccMath.accVec (rowF fl tab (wL L).val (2 * t1.val + 1) (2 * k.val)) (offF fl (wL L).val (2 * t1.val + 1) (2 * k.val)) 2 10) (shapeCast S16 (pair1_last.sl.v2049 d L tab k r g1 g2 hR hin) hc16) = AccMath.accVec (rowF fl tab (wL L).val (2 * t1.val + 1) (2 * k.val)) (offF fl (wL L).val (2 * t1.val + 1) (2 * k.val)) 2 11 :=
      acc_step d L fl tab (wL L).val (2 * t1.val + 1) (2 * k.val) 0 _ hRA ⟨10, by decide⟩ ⟨2, by decide⟩ _ rfl _ hw_v2027 _ (k1_off76_form ..) _ hc16
    have s_A2_11 : addf (AccMath.accVec (rowF fl tab (wL L).val (2 * t1.val + 1) (2 * k.val)) (offF fl (wL L).val (2 * t1.val + 1) (2 * k.val)) 2 11) (shapeCast S16 (pair1_last.sl.v2085 d L tab k r g1 g2 hR hin) hc16) = AccMath.accVec (rowF fl tab (wL L).val (2 * t1.val + 1) (2 * k.val)) (offF fl (wL L).val (2 * t1.val + 1) (2 * k.val)) 2 12 :=
      acc_step d L fl tab (wL L).val (2 * t1.val + 1) (2 * k.val) 0 _ hRA ⟨11, by decide⟩ ⟨2, by decide⟩ _ rfl _ hw_v2063 _ (k1_off77_form ..) _ hc16
    have s_A2_12 : addf (AccMath.accVec (rowF fl tab (wL L).val (2 * t1.val + 1) (2 * k.val)) (offF fl (wL L).val (2 * t1.val + 1) (2 * k.val)) 2 12) (shapeCast S16 (pair1_last.sl.v2121 d L tab k r g1 g2 hR hin) hc16) = AccMath.accVec (rowF fl tab (wL L).val (2 * t1.val + 1) (2 * k.val)) (offF fl (wL L).val (2 * t1.val + 1) (2 * k.val)) 2 13 :=
      acc_step d L fl tab (wL L).val (2 * t1.val + 1) (2 * k.val) 0 _ hRA ⟨12, by decide⟩ ⟨2, by decide⟩ _ rfl _ hw_v2099 _ (k1_off78_form ..) _ hc16
    have s_A2_13 : addf (AccMath.accVec (rowF fl tab (wL L).val (2 * t1.val + 1) (2 * k.val)) (offF fl (wL L).val (2 * t1.val + 1) (2 * k.val)) 2 13) (shapeCast S16 (pair1_last.sl.v2157 d L tab k r g1 g2 hR hin) hc16) = AccMath.accVec (rowF fl tab (wL L).val (2 * t1.val + 1) (2 * k.val)) (offF fl (wL L).val (2 * t1.val + 1) (2 * k.val)) 2 14 :=
      acc_step d L fl tab (wL L).val (2 * t1.val + 1) (2 * k.val) 0 _ hRA ⟨13, by decide⟩ ⟨2, by decide⟩ _ rfl _ hw_v2135 _ (k1_off79_form ..) _ hc16
    have s_A2_14 : addf (AccMath.accVec (rowF fl tab (wL L).val (2 * t1.val + 1) (2 * k.val)) (offF fl (wL L).val (2 * t1.val + 1) (2 * k.val)) 2 14) (shapeCast S16 (pair1_last.sl.v2193 d L tab k r g1 g2 hR hin) hc16) = AccMath.accVec (rowF fl tab (wL L).val (2 * t1.val + 1) (2 * k.val)) (offF fl (wL L).val (2 * t1.val + 1) (2 * k.val)) 2 15 :=
      acc_step d L fl tab (wL L).val (2 * t1.val + 1) (2 * k.val) 0 _ hRA ⟨14, by decide⟩ ⟨2, by decide⟩ _ rfl _ hw_v2171 _ (k1_off80_form ..) _ hc16
    have s_A2_15 : addf (AccMath.accVec (rowF fl tab (wL L).val (2 * t1.val + 1) (2 * k.val)) (offF fl (wL L).val (2 * t1.val + 1) (2 * k.val)) 2 15) (shapeCast S16 (pair1_last.sl.v2229 d L tab k r g1 g2 hR hin) hc16) = AccMath.accVec (rowF fl tab (wL L).val (2 * t1.val + 1) (2 * k.val)) (offF fl (wL L).val (2 * t1.val + 1) (2 * k.val)) 2 16 :=
      acc_step d L fl tab (wL L).val (2 * t1.val + 1) (2 * k.val) 0 _ hRA ⟨15, by decide⟩ ⟨2, by decide⟩ _ rfl _ hw_v2207 _ (k1_off81_form ..) _ hc16
    have s_A2_16 : addf (AccMath.accVec (rowF fl tab (wL L).val (2 * t1.val + 1) (2 * k.val)) (offF fl (wL L).val (2 * t1.val + 1) (2 * k.val)) 2 16) (shapeCast S16 (pair1_last.sl.v1689_1 d L tab k r g1 g2 hR hin) hc16) = AccMath.accVec (rowF fl tab (wL L).val (2 * t1.val + 1) (2 * k.val)) (offF fl (wL L).val (2 * t1.val + 1) (2 * k.val)) 2 17 :=
      acc_step d L fl tab (wL L).val (2 * t1.val + 1) (2 * k.val) 0 _ hRA ⟨16, by decide⟩ ⟨2, by decide⟩ _ rfl _ hw_v1667_1 _ (k1_off66_form ..) _ hc16
    have s_A2_17 : addf (AccMath.accVec (rowF fl tab (wL L).val (2 * t1.val + 1) (2 * k.val)) (offF fl (wL L).val (2 * t1.val + 1) (2 * k.val)) 2 17) (shapeCast S16 (pair1_last.sl.v1725_1 d L tab k r g1 g2 hR hin) hc16) = AccMath.accVec (rowF fl tab (wL L).val (2 * t1.val + 1) (2 * k.val)) (offF fl (wL L).val (2 * t1.val + 1) (2 * k.val)) 2 18 :=
      acc_step d L fl tab (wL L).val (2 * t1.val + 1) (2 * k.val) 0 _ hRA ⟨17, by decide⟩ ⟨2, by decide⟩ _ rfl _ hw_v1703_1 _ (k1_off67_form ..) _ hc16
    have s_A2_18 : addf (AccMath.accVec (rowF fl tab (wL L).val (2 * t1.val + 1) (2 * k.val)) (offF fl (wL L).val (2 * t1.val + 1) (2 * k.val)) 2 18) (shapeCast S16 (pair1_last.sl.v1761_1 d L tab k r g1 g2 hR hin) hc16) = AccMath.accVec (rowF fl tab (wL L).val (2 * t1.val + 1) (2 * k.val)) (offF fl (wL L).val (2 * t1.val + 1) (2 * k.val)) 2 19 :=
      acc_step d L fl tab (wL L).val (2 * t1.val + 1) (2 * k.val) 0 _ hRA ⟨18, by decide⟩ ⟨2, by decide⟩ _ rfl _ hw_v1739_1 _ (k1_off68_form ..) _ hc16
    have s_A2_19 : addf (AccMath.accVec (rowF fl tab (wL L).val (2 * t1.val + 1) (2 * k.val)) (offF fl (wL L).val (2 * t1.val + 1) (2 * k.val)) 2 19) (shapeCast S16 (pair1_last.sl.v1797_1 d L tab k r g1 g2 hR hin) hc16) = AccMath.accVec (rowF fl tab (wL L).val (2 * t1.val + 1) (2 * k.val)) (offF fl (wL L).val (2 * t1.val + 1) (2 * k.val)) 2 20 :=
      acc_step d L fl tab (wL L).val (2 * t1.val + 1) (2 * k.val) 0 _ hRA ⟨19, by decide⟩ ⟨2, by decide⟩ _ rfl _ hw_v1775_1 _ (k1_off69_form ..) _ hc16
    have s_A2_20 : addf (AccMath.accVec (rowF fl tab (wL L).val (2 * t1.val + 1) (2 * k.val)) (offF fl (wL L).val (2 * t1.val + 1) (2 * k.val)) 2 20) (shapeCast S16 (pair1_last.sl.v1833_1 d L tab k r g1 g2 hR hin) hc16) = AccMath.accVec (rowF fl tab (wL L).val (2 * t1.val + 1) (2 * k.val)) (offF fl (wL L).val (2 * t1.val + 1) (2 * k.val)) 2 21 :=
      acc_step d L fl tab (wL L).val (2 * t1.val + 1) (2 * k.val) 0 _ hRA ⟨20, by decide⟩ ⟨2, by decide⟩ _ rfl _ hw_v1811_1 _ (k1_off70_form ..) _ hc16
    have s_A2_21 : addf (AccMath.accVec (rowF fl tab (wL L).val (2 * t1.val + 1) (2 * k.val)) (offF fl (wL L).val (2 * t1.val + 1) (2 * k.val)) 2 21) (shapeCast S16 (pair1_last.sl.v1869_1 d L tab k r g1 g2 hR hin) hc16) = AccMath.accVec (rowF fl tab (wL L).val (2 * t1.val + 1) (2 * k.val)) (offF fl (wL L).val (2 * t1.val + 1) (2 * k.val)) 2 22 :=
      acc_step d L fl tab (wL L).val (2 * t1.val + 1) (2 * k.val) 0 _ hRA ⟨21, by decide⟩ ⟨2, by decide⟩ _ rfl _ hw_v1847_1 _ (k1_off71_form ..) _ hc16
    have s_A2_22 : addf (AccMath.accVec (rowF fl tab (wL L).val (2 * t1.val + 1) (2 * k.val)) (offF fl (wL L).val (2 * t1.val + 1) (2 * k.val)) 2 22) (shapeCast S16 (pair1_last.sl.v1905_1 d L tab k r g1 g2 hR hin) hc16) = AccMath.accVec (rowF fl tab (wL L).val (2 * t1.val + 1) (2 * k.val)) (offF fl (wL L).val (2 * t1.val + 1) (2 * k.val)) 2 23 :=
      acc_step d L fl tab (wL L).val (2 * t1.val + 1) (2 * k.val) 0 _ hRA ⟨22, by decide⟩ ⟨2, by decide⟩ _ rfl _ hw_v1883_1 _ (k1_off72_form ..) _ hc16
    have s_A2_23 : addf (AccMath.accVec (rowF fl tab (wL L).val (2 * t1.val + 1) (2 * k.val)) (offF fl (wL L).val (2 * t1.val + 1) (2 * k.val)) 2 23) (shapeCast S16 (pair1_last.sl.v1941_1 d L tab k r g1 g2 hR hin) hc16) = AccMath.accVec (rowF fl tab (wL L).val (2 * t1.val + 1) (2 * k.val)) (offF fl (wL L).val (2 * t1.val + 1) (2 * k.val)) 2 24 :=
      acc_step d L fl tab (wL L).val (2 * t1.val + 1) (2 * k.val) 0 _ hRA ⟨23, by decide⟩ ⟨2, by decide⟩ _ rfl _ hw_v1919_1 _ (k1_off73_form ..) _ hc16
    have s_A2_24 : addf (AccMath.accVec (rowF fl tab (wL L).val (2 * t1.val + 1) (2 * k.val)) (offF fl (wL L).val (2 * t1.val + 1) (2 * k.val)) 2 24) (shapeCast S16 (pair1_last.sl.v1977_1 d L tab k r g1 g2 hR hin) hc16) = AccMath.accVec (rowF fl tab (wL L).val (2 * t1.val + 1) (2 * k.val)) (offF fl (wL L).val (2 * t1.val + 1) (2 * k.val)) 2 25 :=
      acc_step d L fl tab (wL L).val (2 * t1.val + 1) (2 * k.val) 0 _ hRA ⟨24, by decide⟩ ⟨2, by decide⟩ _ rfl _ hw_v1955_1 _ (k1_off74_form ..) _ hc16
    have s_A2_25 : addf (AccMath.accVec (rowF fl tab (wL L).val (2 * t1.val + 1) (2 * k.val)) (offF fl (wL L).val (2 * t1.val + 1) (2 * k.val)) 2 25) (shapeCast S16 (pair1_last.sl.v2013_1 d L tab k r g1 g2 hR hin) hc16) = AccMath.accVec (rowF fl tab (wL L).val (2 * t1.val + 1) (2 * k.val)) (offF fl (wL L).val (2 * t1.val + 1) (2 * k.val)) 2 26 :=
      acc_step d L fl tab (wL L).val (2 * t1.val + 1) (2 * k.val) 0 _ hRA ⟨25, by decide⟩ ⟨2, by decide⟩ _ rfl _ hw_v1991_1 _ (k1_off75_form ..) _ hc16
    have s_A2_26 : addf (AccMath.accVec (rowF fl tab (wL L).val (2 * t1.val + 1) (2 * k.val)) (offF fl (wL L).val (2 * t1.val + 1) (2 * k.val)) 2 26) (shapeCast S16 (pair1_last.sl.v2049_1 d L tab k r g1 g2 hR hin) hc16) = AccMath.accVec (rowF fl tab (wL L).val (2 * t1.val + 1) (2 * k.val)) (offF fl (wL L).val (2 * t1.val + 1) (2 * k.val)) 2 27 :=
      acc_step d L fl tab (wL L).val (2 * t1.val + 1) (2 * k.val) 0 _ hRA ⟨26, by decide⟩ ⟨2, by decide⟩ _ rfl _ hw_v2027_1 _ (k1_off76_form ..) _ hc16
    have s_A2_27 : addf (AccMath.accVec (rowF fl tab (wL L).val (2 * t1.val + 1) (2 * k.val)) (offF fl (wL L).val (2 * t1.val + 1) (2 * k.val)) 2 27) (shapeCast S16 (pair1_last.sl.v2085_1 d L tab k r g1 g2 hR hin) hc16) = AccMath.accVec (rowF fl tab (wL L).val (2 * t1.val + 1) (2 * k.val)) (offF fl (wL L).val (2 * t1.val + 1) (2 * k.val)) 2 28 :=
      acc_step d L fl tab (wL L).val (2 * t1.val + 1) (2 * k.val) 0 _ hRA ⟨27, by decide⟩ ⟨2, by decide⟩ _ rfl _ hw_v2063_1 _ (k1_off77_form ..) _ hc16
    have s_A2_28 : addf (AccMath.accVec (rowF fl tab (wL L).val (2 * t1.val + 1) (2 * k.val)) (offF fl (wL L).val (2 * t1.val + 1) (2 * k.val)) 2 28) (shapeCast S16 (pair1_last.sl.v2121_1 d L tab k r g1 g2 hR hin) hc16) = AccMath.accVec (rowF fl tab (wL L).val (2 * t1.val + 1) (2 * k.val)) (offF fl (wL L).val (2 * t1.val + 1) (2 * k.val)) 2 29 :=
      acc_step d L fl tab (wL L).val (2 * t1.val + 1) (2 * k.val) 0 _ hRA ⟨28, by decide⟩ ⟨2, by decide⟩ _ rfl _ hw_v2099_1 _ (k1_off78_form ..) _ hc16
    have s_A2_29 : addf (AccMath.accVec (rowF fl tab (wL L).val (2 * t1.val + 1) (2 * k.val)) (offF fl (wL L).val (2 * t1.val + 1) (2 * k.val)) 2 29) (shapeCast S16 (pair1_last.sl.v2157_1 d L tab k r g1 g2 hR hin) hc16) = AccMath.accVec (rowF fl tab (wL L).val (2 * t1.val + 1) (2 * k.val)) (offF fl (wL L).val (2 * t1.val + 1) (2 * k.val)) 2 30 :=
      acc_step d L fl tab (wL L).val (2 * t1.val + 1) (2 * k.val) 0 _ hRA ⟨29, by decide⟩ ⟨2, by decide⟩ _ rfl _ hw_v2135_1 _ (k1_off79_form ..) _ hc16
    have s_A2_30 : addf (AccMath.accVec (rowF fl tab (wL L).val (2 * t1.val + 1) (2 * k.val)) (offF fl (wL L).val (2 * t1.val + 1) (2 * k.val)) 2 30) (shapeCast S16 (pair1_last.sl.v2193_1 d L tab k r g1 g2 hR hin) hc16) = AccMath.accVec (rowF fl tab (wL L).val (2 * t1.val + 1) (2 * k.val)) (offF fl (wL L).val (2 * t1.val + 1) (2 * k.val)) 2 31 :=
      acc_step d L fl tab (wL L).val (2 * t1.val + 1) (2 * k.val) 0 _ hRA ⟨30, by decide⟩ ⟨2, by decide⟩ _ rfl _ hw_v2171_1 _ (k1_off80_form ..) _ hc16
    have s_A2_31 : addf (AccMath.accVec (rowF fl tab (wL L).val (2 * t1.val + 1) (2 * k.val)) (offF fl (wL L).val (2 * t1.val + 1) (2 * k.val)) 2 31) (shapeCast S16 (pair1_last.sl.v2229_1 d L tab k r g1 g2 hR hin) hc16) = AccMath.accVec (rowF fl tab (wL L).val (2 * t1.val + 1) (2 * k.val)) (offF fl (wL L).val (2 * t1.val + 1) (2 * k.val)) 2 32 :=
      acc_step d L fl tab (wL L).val (2 * t1.val + 1) (2 * k.val) 0 _ hRA ⟨31, by decide⟩ ⟨2, by decide⟩ _ rfl _ hw_v2207_1 _ (k1_off81_form ..) _ hc16
    have s_A2_32 : addf (AccMath.accVec (rowF fl tab (wL L).val (2 * t1.val + 1) (2 * k.val)) (offF fl (wL L).val (2 * t1.val + 1) (2 * k.val)) 2 32) (shapeCast S16 (pair1_last.sl.v1689_2 d L tab k r g1 g2 hR hin) hc16) = AccMath.accVec (rowF fl tab (wL L).val (2 * t1.val + 1) (2 * k.val)) (offF fl (wL L).val (2 * t1.val + 1) (2 * k.val)) 2 33 :=
      acc_step d L fl tab (wL L).val (2 * t1.val + 1) (2 * k.val) 0 _ hRA ⟨32, by decide⟩ ⟨2, by decide⟩ _ rfl _ hw_v1667_2 _ (k1_off66_form ..) _ hc16
    have s_A2_33 : addf (AccMath.accVec (rowF fl tab (wL L).val (2 * t1.val + 1) (2 * k.val)) (offF fl (wL L).val (2 * t1.val + 1) (2 * k.val)) 2 33) (shapeCast S16 (pair1_last.sl.v1725_2 d L tab k r g1 g2 hR hin) hc16) = AccMath.accVec (rowF fl tab (wL L).val (2 * t1.val + 1) (2 * k.val)) (offF fl (wL L).val (2 * t1.val + 1) (2 * k.val)) 2 34 :=
      acc_step d L fl tab (wL L).val (2 * t1.val + 1) (2 * k.val) 0 _ hRA ⟨33, by decide⟩ ⟨2, by decide⟩ _ rfl _ hw_v1703_2 _ (k1_off67_form ..) _ hc16
    have s_A2_34 : addf (AccMath.accVec (rowF fl tab (wL L).val (2 * t1.val + 1) (2 * k.val)) (offF fl (wL L).val (2 * t1.val + 1) (2 * k.val)) 2 34) (shapeCast S16 (pair1_last.sl.v1761_2 d L tab k r g1 g2 hR hin) hc16) = AccMath.accVec (rowF fl tab (wL L).val (2 * t1.val + 1) (2 * k.val)) (offF fl (wL L).val (2 * t1.val + 1) (2 * k.val)) 2 35 :=
      acc_step d L fl tab (wL L).val (2 * t1.val + 1) (2 * k.val) 0 _ hRA ⟨34, by decide⟩ ⟨2, by decide⟩ _ rfl _ hw_v1739_2 _ (k1_off68_form ..) _ hc16
    have s_A2_35 : addf (AccMath.accVec (rowF fl tab (wL L).val (2 * t1.val + 1) (2 * k.val)) (offF fl (wL L).val (2 * t1.val + 1) (2 * k.val)) 2 35) (shapeCast S16 (pair1_last.sl.v1797_2 d L tab k r g1 g2 hR hin) hc16) = AccMath.accVec (rowF fl tab (wL L).val (2 * t1.val + 1) (2 * k.val)) (offF fl (wL L).val (2 * t1.val + 1) (2 * k.val)) 2 36 :=
      acc_step d L fl tab (wL L).val (2 * t1.val + 1) (2 * k.val) 0 _ hRA ⟨35, by decide⟩ ⟨2, by decide⟩ _ rfl _ hw_v1775_2 _ (k1_off69_form ..) _ hc16
    have s_A2_36 : addf (AccMath.accVec (rowF fl tab (wL L).val (2 * t1.val + 1) (2 * k.val)) (offF fl (wL L).val (2 * t1.val + 1) (2 * k.val)) 2 36) (shapeCast S16 (pair1_last.sl.v1833_2 d L tab k r g1 g2 hR hin) hc16) = AccMath.accVec (rowF fl tab (wL L).val (2 * t1.val + 1) (2 * k.val)) (offF fl (wL L).val (2 * t1.val + 1) (2 * k.val)) 2 37 :=
      acc_step d L fl tab (wL L).val (2 * t1.val + 1) (2 * k.val) 0 _ hRA ⟨36, by decide⟩ ⟨2, by decide⟩ _ rfl _ hw_v1811_2 _ (k1_off70_form ..) _ hc16
    have s_A2_37 : addf (AccMath.accVec (rowF fl tab (wL L).val (2 * t1.val + 1) (2 * k.val)) (offF fl (wL L).val (2 * t1.val + 1) (2 * k.val)) 2 37) (shapeCast S16 (pair1_last.sl.v1869_2 d L tab k r g1 g2 hR hin) hc16) = AccMath.accVec (rowF fl tab (wL L).val (2 * t1.val + 1) (2 * k.val)) (offF fl (wL L).val (2 * t1.val + 1) (2 * k.val)) 2 38 :=
      acc_step d L fl tab (wL L).val (2 * t1.val + 1) (2 * k.val) 0 _ hRA ⟨37, by decide⟩ ⟨2, by decide⟩ _ rfl _ hw_v1847_2 _ (k1_off71_form ..) _ hc16
    have s_A2_38 : addf (AccMath.accVec (rowF fl tab (wL L).val (2 * t1.val + 1) (2 * k.val)) (offF fl (wL L).val (2 * t1.val + 1) (2 * k.val)) 2 38) (shapeCast S16 (pair1_last.sl.v1905_2 d L tab k r g1 g2 hR hin) hc16) = AccMath.accVec (rowF fl tab (wL L).val (2 * t1.val + 1) (2 * k.val)) (offF fl (wL L).val (2 * t1.val + 1) (2 * k.val)) 2 39 :=
      acc_step d L fl tab (wL L).val (2 * t1.val + 1) (2 * k.val) 0 _ hRA ⟨38, by decide⟩ ⟨2, by decide⟩ _ rfl _ hw_v1883_2 _ (k1_off72_form ..) _ hc16
    have s_A2_39 : addf (AccMath.accVec (rowF fl tab (wL L).val (2 * t1.val + 1) (2 * k.val)) (offF fl (wL L).val (2 * t1.val + 1) (2 * k.val)) 2 39) (shapeCast S16 (pair1_last.sl.v1941_2 d L tab k r g1 g2 hR hin) hc16) = AccMath.accVec (rowF fl tab (wL L).val (2 * t1.val + 1) (2 * k.val)) (offF fl (wL L).val (2 * t1.val + 1) (2 * k.val)) 2 40 :=
      acc_step d L fl tab (wL L).val (2 * t1.val + 1) (2 * k.val) 0 _ hRA ⟨39, by decide⟩ ⟨2, by decide⟩ _ rfl _ hw_v1919_2 _ (k1_off73_form ..) _ hc16
    have s_A2_40 : addf (AccMath.accVec (rowF fl tab (wL L).val (2 * t1.val + 1) (2 * k.val)) (offF fl (wL L).val (2 * t1.val + 1) (2 * k.val)) 2 40) (shapeCast S16 (pair1_last.sl.v1977_2 d L tab k r g1 g2 hR hin) hc16) = AccMath.accVec (rowF fl tab (wL L).val (2 * t1.val + 1) (2 * k.val)) (offF fl (wL L).val (2 * t1.val + 1) (2 * k.val)) 2 41 :=
      acc_step d L fl tab (wL L).val (2 * t1.val + 1) (2 * k.val) 0 _ hRA ⟨40, by decide⟩ ⟨2, by decide⟩ _ rfl _ hw_v1955_2 _ (k1_off74_form ..) _ hc16
    have s_A2_41 : addf (AccMath.accVec (rowF fl tab (wL L).val (2 * t1.val + 1) (2 * k.val)) (offF fl (wL L).val (2 * t1.val + 1) (2 * k.val)) 2 41) (shapeCast S16 (pair1_last.sl.v2013_2 d L tab k r g1 g2 hR hin) hc16) = AccMath.accVec (rowF fl tab (wL L).val (2 * t1.val + 1) (2 * k.val)) (offF fl (wL L).val (2 * t1.val + 1) (2 * k.val)) 2 42 :=
      acc_step d L fl tab (wL L).val (2 * t1.val + 1) (2 * k.val) 0 _ hRA ⟨41, by decide⟩ ⟨2, by decide⟩ _ rfl _ hw_v1991_2 _ (k1_off75_form ..) _ hc16
    have s_A2_42 : addf (AccMath.accVec (rowF fl tab (wL L).val (2 * t1.val + 1) (2 * k.val)) (offF fl (wL L).val (2 * t1.val + 1) (2 * k.val)) 2 42) (shapeCast S16 (pair1_last.sl.v2049_2 d L tab k r g1 g2 hR hin) hc16) = AccMath.accVec (rowF fl tab (wL L).val (2 * t1.val + 1) (2 * k.val)) (offF fl (wL L).val (2 * t1.val + 1) (2 * k.val)) 2 43 :=
      acc_step d L fl tab (wL L).val (2 * t1.val + 1) (2 * k.val) 0 _ hRA ⟨42, by decide⟩ ⟨2, by decide⟩ _ rfl _ hw_v2027_2 _ (k1_off76_form ..) _ hc16
    have s_A2_43 : addf (AccMath.accVec (rowF fl tab (wL L).val (2 * t1.val + 1) (2 * k.val)) (offF fl (wL L).val (2 * t1.val + 1) (2 * k.val)) 2 43) (shapeCast S16 (pair1_last.sl.v2085_2 d L tab k r g1 g2 hR hin) hc16) = AccMath.accVec (rowF fl tab (wL L).val (2 * t1.val + 1) (2 * k.val)) (offF fl (wL L).val (2 * t1.val + 1) (2 * k.val)) 2 44 :=
      acc_step d L fl tab (wL L).val (2 * t1.val + 1) (2 * k.val) 0 _ hRA ⟨43, by decide⟩ ⟨2, by decide⟩ _ rfl _ hw_v2063_2 _ (k1_off77_form ..) _ hc16
    have s_A2_44 : addf (AccMath.accVec (rowF fl tab (wL L).val (2 * t1.val + 1) (2 * k.val)) (offF fl (wL L).val (2 * t1.val + 1) (2 * k.val)) 2 44) (shapeCast S16 (pair1_last.sl.v2121_2 d L tab k r g1 g2 hR hin) hc16) = AccMath.accVec (rowF fl tab (wL L).val (2 * t1.val + 1) (2 * k.val)) (offF fl (wL L).val (2 * t1.val + 1) (2 * k.val)) 2 45 :=
      acc_step d L fl tab (wL L).val (2 * t1.val + 1) (2 * k.val) 0 _ hRA ⟨44, by decide⟩ ⟨2, by decide⟩ _ rfl _ hw_v2099_2 _ (k1_off78_form ..) _ hc16
    have s_A2_45 : addf (AccMath.accVec (rowF fl tab (wL L).val (2 * t1.val + 1) (2 * k.val)) (offF fl (wL L).val (2 * t1.val + 1) (2 * k.val)) 2 45) (shapeCast S16 (pair1_last.sl.v2157_2 d L tab k r g1 g2 hR hin) hc16) = AccMath.accVec (rowF fl tab (wL L).val (2 * t1.val + 1) (2 * k.val)) (offF fl (wL L).val (2 * t1.val + 1) (2 * k.val)) 2 46 :=
      acc_step d L fl tab (wL L).val (2 * t1.val + 1) (2 * k.val) 0 _ hRA ⟨45, by decide⟩ ⟨2, by decide⟩ _ rfl _ hw_v2135_2 _ (k1_off79_form ..) _ hc16
    have s_A2_46 : addf (AccMath.accVec (rowF fl tab (wL L).val (2 * t1.val + 1) (2 * k.val)) (offF fl (wL L).val (2 * t1.val + 1) (2 * k.val)) 2 46) (shapeCast S16 (pair1_last.sl.v2193_2 d L tab k r g1 g2 hR hin) hc16) = AccMath.accVec (rowF fl tab (wL L).val (2 * t1.val + 1) (2 * k.val)) (offF fl (wL L).val (2 * t1.val + 1) (2 * k.val)) 2 47 :=
      acc_step d L fl tab (wL L).val (2 * t1.val + 1) (2 * k.val) 0 _ hRA ⟨46, by decide⟩ ⟨2, by decide⟩ _ rfl _ hw_v2171_2 _ (k1_off80_form ..) _ hc16
    have s_A2_47 : addf (AccMath.accVec (rowF fl tab (wL L).val (2 * t1.val + 1) (2 * k.val)) (offF fl (wL L).val (2 * t1.val + 1) (2 * k.val)) 2 47) (shapeCast S16 (pair1_last.sl.v2229_2 d L tab k r g1 g2 hR hin) hc16) = AccMath.accVec (rowF fl tab (wL L).val (2 * t1.val + 1) (2 * k.val)) (offF fl (wL L).val (2 * t1.val + 1) (2 * k.val)) 2 48 :=
      acc_step d L fl tab (wL L).val (2 * t1.val + 1) (2 * k.val) 0 _ hRA ⟨47, by decide⟩ ⟨2, by decide⟩ _ rfl _ hw_v2207_2 _ (k1_off81_form ..) _ hc16
    have s_A2_48 : addf (AccMath.accVec (rowF fl tab (wL L).val (2 * t1.val + 1) (2 * k.val)) (offF fl (wL L).val (2 * t1.val + 1) (2 * k.val)) 2 48) (shapeCast S16 (pair1_last.sl.v1478 d L tab k r g1 g2 hR hin) hc16) = AccMath.accVec (rowF fl tab (wL L).val (2 * t1.val + 1) (2 * k.val)) (offF fl (wL L).val (2 * t1.val + 1) (2 * k.val)) 2 49 :=
      acc_step d L fl tab (wL L).val (2 * t1.val + 1) (2 * k.val) 0 _ hRA ⟨48, by decide⟩ ⟨2, by decide⟩ _ rfl _ hw_v1456 _ (k1_off83_form ..) _ hc16
    have s_A2_49 : addf (AccMath.accVec (rowF fl tab (wL L).val (2 * t1.val + 1) (2 * k.val)) (offF fl (wL L).val (2 * t1.val + 1) (2 * k.val)) 2 49) (shapeCast S16 (pair1_last.sl.v1512 d L tab k r g1 g2 hR hin) hc16) = AccMath.accVec (rowF fl tab (wL L).val (2 * t1.val + 1) (2 * k.val)) (offF fl (wL L).val (2 * t1.val + 1) (2 * k.val)) 2 50 :=
      acc_step d L fl tab (wL L).val (2 * t1.val + 1) (2 * k.val) 0 _ hRA ⟨49, by decide⟩ ⟨2, by decide⟩ _ rfl _ hw_v1490 _ (k1_off84_form ..) _ hc16
    have hP_A2 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val)) (offF fl (wL L).val (2 * t1.val + 1) (2 * k.val)) 2 0) (shapeCast S16 (pair1_last.sl.v1689 d L tab k r g1 g2 hR hin) hc16)) (shapeCast S16 (pair1_last.sl.v1725 d L tab k r g1 g2 hR hin) hc16)) (shapeCast S16 (pair1_last.sl.v1761 d L tab k r g1 g2 hR hin) hc16)) (shapeCast S16 (pair1_last.sl.v1797 d L tab k r g1 g2 hR hin) hc16)) (shapeCast S16 (pair1_last.sl.v1833 d L tab k r g1 g2 hR hin) hc16)) (shapeCast S16 (pair1_last.sl.v1869 d L tab k r g1 g2 hR hin) hc16)) (shapeCast S16 (pair1_last.sl.v1905 d L tab k r g1 g2 hR hin) hc16)) (shapeCast S16 (pair1_last.sl.v1941 d L tab k r g1 g2 hR hin) hc16)) (shapeCast S16 (pair1_last.sl.v1977 d L tab k r g1 g2 hR hin) hc16)) (shapeCast S16 (pair1_last.sl.v2013 d L tab k r g1 g2 hR hin) hc16)) (shapeCast S16 (pair1_last.sl.v2049 d L tab k r g1 g2 hR hin) hc16)) (shapeCast S16 (pair1_last.sl.v2085 d L tab k r g1 g2 hR hin) hc16)) (shapeCast S16 (pair1_last.sl.v2121 d L tab k r g1 g2 hR hin) hc16)) (shapeCast S16 (pair1_last.sl.v2157 d L tab k r g1 g2 hR hin) hc16)) (shapeCast S16 (pair1_last.sl.v2193 d L tab k r g1 g2 hR hin) hc16)) (shapeCast S16 (pair1_last.sl.v2229 d L tab k r g1 g2 hR hin) hc16)) (shapeCast S16 (pair1_last.sl.v1689_1 d L tab k r g1 g2 hR hin) hc16)) (shapeCast S16 (pair1_last.sl.v1725_1 d L tab k r g1 g2 hR hin) hc16)) (shapeCast S16 (pair1_last.sl.v1761_1 d L tab k r g1 g2 hR hin) hc16)) (shapeCast S16 (pair1_last.sl.v1797_1 d L tab k r g1 g2 hR hin) hc16)) (shapeCast S16 (pair1_last.sl.v1833_1 d L tab k r g1 g2 hR hin) hc16)) (shapeCast S16 (pair1_last.sl.v1869_1 d L tab k r g1 g2 hR hin) hc16)) (shapeCast S16 (pair1_last.sl.v1905_1 d L tab k r g1 g2 hR hin) hc16)) (shapeCast S16 (pair1_last.sl.v1941_1 d L tab k r g1 g2 hR hin) hc16)) (shapeCast S16 (pair1_last.sl.v1977_1 d L tab k r g1 g2 hR hin) hc16)) (shapeCast S16 (pair1_last.sl.v2013_1 d L tab k r g1 g2 hR hin) hc16)) (shapeCast S16 (pair1_last.sl.v2049_1 d L tab k r g1 g2 hR hin) hc16)) (shapeCast S16 (pair1_last.sl.v2085_1 d L tab k r g1 g2 hR hin) hc16)) (shapeCast S16 (pair1_last.sl.v2121_1 d L tab k r g1 g2 hR hin) hc16)) (shapeCast S16 (pair1_last.sl.v2157_1 d L tab k r g1 g2 hR hin) hc16)) (shapeCast S16 (pair1_last.sl.v2193_1 d L tab k r g1 g2 hR hin) hc16)) (shapeCast S16 (pair1_last.sl.v2229_1 d L tab k r g1 g2 hR hin) hc16)) (shapeCast S16 (pair1_last.sl.v1689_2 d L tab k r g1 g2 hR hin) hc16)) (shapeCast S16 (pair1_last.sl.v1725_2 d L tab k r g1 g2 hR hin) hc16)) (shapeCast S16 (pair1_last.sl.v1761_2 d L tab k r g1 g2 hR hin) hc16)) (shapeCast S16 (pair1_last.sl.v1797_2 d L tab k r g1 g2 hR hin) hc16)) (shapeCast S16 (pair1_last.sl.v1833_2 d L tab k r g1 g2 hR hin) hc16)) (shapeCast S16 (pair1_last.sl.v1869_2 d L tab k r g1 g2 hR hin) hc16)) (shapeCast S16 (pair1_last.sl.v1905_2 d L tab k r g1 g2 hR hin) hc16)) (shapeCast S16 (pair1_last.sl.v1941_2 d L tab k r g1 g2 hR hin) hc16)) (shapeCast S16 (pair1_last.sl.v1977_2 d L tab k r g1 g2 hR hin) hc16)) (shapeCast S16 (pair1_last.sl.v2013_2 d L tab k r g1 g2 hR hin) hc16)) (shapeCast S16 (pair1_last.sl.v2049_2 d L tab k r g1 g2 hR hin) hc16)) (shapeCast S16 (pair1_last.sl.v2085_2 d L tab k r g1 g2 hR hin) hc16)) (shapeCast S16 (pair1_last.sl.v2121_2 d L tab k r g1 g2 hR hin) hc16)) (shapeCast S16 (pair1_last.sl.v2157_2 d L tab k r g1 g2 hR hin) hc16)) (shapeCast S16 (pair1_last.sl.v2193_2 d L tab k r g1 g2 hR hin) hc16)) (shapeCast S16 (pair1_last.sl.v2229_2 d L tab k r g1 g2 hR hin) hc16)) (shapeCast S16 (pair1_last.sl.v1478 d L tab k r g1 g2 hR hin) hc16)) (shapeCast S16 (pair1_last.sl.v1512 d L tab k r g1 g2 hR hin) hc16)) hc1 x = Spec.bagPartial fl tab (128 * (wL L).val + 16 * (2 * t1.val + 1) + (2 * k.val)) (16 * 2 + (x 2).val) 50 := fun x => by
      rw [s_A2_0, s_A2_1, s_A2_2, s_A2_3, s_A2_4, s_A2_5, s_A2_6, s_A2_7, s_A2_8, s_A2_9, s_A2_10, s_A2_11, s_A2_12, s_A2_13, s_A2_14, s_A2_15, s_A2_16, s_A2_17, s_A2_18, s_A2_19, s_A2_20, s_A2_21, s_A2_22, s_A2_23, s_A2_24, s_A2_25, s_A2_26, s_A2_27, s_A2_28, s_A2_29, s_A2_30, s_A2_31, s_A2_32, s_A2_33, s_A2_34, s_A2_35, s_A2_36, s_A2_37, s_A2_38, s_A2_39, s_A2_40, s_A2_41, s_A2_42, s_A2_43, s_A2_44, s_A2_45, s_A2_46, s_A2_47, s_A2_48, s_A2_49]
      exact payload_ok fl tab (wL L).val (2 * t1.val + 1) (2 * k.val) ⟨2, by decide⟩ hc1 x
    have s_A3_0 : addf (AccMath.accVec (rowF fl tab (wL L).val (2 * t1.val + 1) (2 * k.val)) (offF fl (wL L).val (2 * t1.val + 1) (2 * k.val)) 3 0) (shapeCast S16 (pair1_last.sl.v1697 d L tab k r g1 g2 hR hin) hc16) = AccMath.accVec (rowF fl tab (wL L).val (2 * t1.val + 1) (2 * k.val)) (offF fl (wL L).val (2 * t1.val + 1) (2 * k.val)) 3 1 :=
      acc_step d L fl tab (wL L).val (2 * t1.val + 1) (2 * k.val) 0 _ hRA ⟨0, by decide⟩ ⟨3, by decide⟩ _ rfl _ hw_v1667 _ (k1_off66_form ..) _ hc16
    have s_A3_1 : addf (AccMath.accVec (rowF fl tab (wL L).val (2 * t1.val + 1) (2 * k.val)) (offF fl (wL L).val (2 * t1.val + 1) (2 * k.val)) 3 1) (shapeCast S16 (pair1_last.sl.v1733 d L tab k r g1 g2 hR hin) hc16) = AccMath.accVec (rowF fl tab (wL L).val (2 * t1.val + 1) (2 * k.val)) (offF fl (wL L).val (2 * t1.val + 1) (2 * k.val)) 3 2 :=
      acc_step d L fl tab (wL L).val (2 * t1.val + 1) (2 * k.val) 0 _ hRA ⟨1, by decide⟩ ⟨3, by decide⟩ _ rfl _ hw_v1703 _ (k1_off67_form ..) _ hc16
    have s_A3_2 : addf (AccMath.accVec (rowF fl tab (wL L).val (2 * t1.val + 1) (2 * k.val)) (offF fl (wL L).val (2 * t1.val + 1) (2 * k.val)) 3 2) (shapeCast S16 (pair1_last.sl.v1769 d L tab k r g1 g2 hR hin) hc16) = AccMath.accVec (rowF fl tab (wL L).val (2 * t1.val + 1) (2 * k.val)) (offF fl (wL L).val (2 * t1.val + 1) (2 * k.val)) 3 3 :=
      acc_step d L fl tab (wL L).val (2 * t1.val + 1) (2 * k.val) 0 _ hRA ⟨2, by decide⟩ ⟨3, by decide⟩ _ rfl _ hw_v1739 _ (k1_off68_form ..) _ hc16
    have s_A3_3 : addf (AccMath.accVec (rowF fl tab (wL L).val (2 * t1.val + 1) (2 * k.val)) (offF fl (wL L).val (2 * t1.val + 1) (2 * k.val)) 3 3) (shapeCast S16 (pair1_last.sl.v1805 d L tab k r g1 g2 hR hin) hc16) = AccMath.accVec (rowF fl tab (wL L).val (2 * t1.val + 1) (2 * k.val)) (offF fl (wL L).val (2 * t1.val + 1) (2 * k.val)) 3 4 :=
      acc_step d L fl tab (wL L).val (2 * t1.val + 1) (2 * k.val) 0 _ hRA ⟨3, by decide⟩ ⟨3, by decide⟩ _ rfl _ hw_v1775 _ (k1_off69_form ..) _ hc16
    have s_A3_4 : addf (AccMath.accVec (rowF fl tab (wL L).val (2 * t1.val + 1) (2 * k.val)) (offF fl (wL L).val (2 * t1.val + 1) (2 * k.val)) 3 4) (shapeCast S16 (pair1_last.sl.v1841 d L tab k r g1 g2 hR hin) hc16) = AccMath.accVec (rowF fl tab (wL L).val (2 * t1.val + 1) (2 * k.val)) (offF fl (wL L).val (2 * t1.val + 1) (2 * k.val)) 3 5 :=
      acc_step d L fl tab (wL L).val (2 * t1.val + 1) (2 * k.val) 0 _ hRA ⟨4, by decide⟩ ⟨3, by decide⟩ _ rfl _ hw_v1811 _ (k1_off70_form ..) _ hc16
    have s_A3_5 : addf (AccMath.accVec (rowF fl tab (wL L).val (2 * t1.val + 1) (2 * k.val)) (offF fl (wL L).val (2 * t1.val + 1) (2 * k.val)) 3 5) (shapeCast S16 (pair1_last.sl.v1877 d L tab k r g1 g2 hR hin) hc16) = AccMath.accVec (rowF fl tab (wL L).val (2 * t1.val + 1) (2 * k.val)) (offF fl (wL L).val (2 * t1.val + 1) (2 * k.val)) 3 6 :=
      acc_step d L fl tab (wL L).val (2 * t1.val + 1) (2 * k.val) 0 _ hRA ⟨5, by decide⟩ ⟨3, by decide⟩ _ rfl _ hw_v1847 _ (k1_off71_form ..) _ hc16
    have s_A3_6 : addf (AccMath.accVec (rowF fl tab (wL L).val (2 * t1.val + 1) (2 * k.val)) (offF fl (wL L).val (2 * t1.val + 1) (2 * k.val)) 3 6) (shapeCast S16 (pair1_last.sl.v1913 d L tab k r g1 g2 hR hin) hc16) = AccMath.accVec (rowF fl tab (wL L).val (2 * t1.val + 1) (2 * k.val)) (offF fl (wL L).val (2 * t1.val + 1) (2 * k.val)) 3 7 :=
      acc_step d L fl tab (wL L).val (2 * t1.val + 1) (2 * k.val) 0 _ hRA ⟨6, by decide⟩ ⟨3, by decide⟩ _ rfl _ hw_v1883 _ (k1_off72_form ..) _ hc16
    have s_A3_7 : addf (AccMath.accVec (rowF fl tab (wL L).val (2 * t1.val + 1) (2 * k.val)) (offF fl (wL L).val (2 * t1.val + 1) (2 * k.val)) 3 7) (shapeCast S16 (pair1_last.sl.v1949 d L tab k r g1 g2 hR hin) hc16) = AccMath.accVec (rowF fl tab (wL L).val (2 * t1.val + 1) (2 * k.val)) (offF fl (wL L).val (2 * t1.val + 1) (2 * k.val)) 3 8 :=
      acc_step d L fl tab (wL L).val (2 * t1.val + 1) (2 * k.val) 0 _ hRA ⟨7, by decide⟩ ⟨3, by decide⟩ _ rfl _ hw_v1919 _ (k1_off73_form ..) _ hc16
    have s_A3_8 : addf (AccMath.accVec (rowF fl tab (wL L).val (2 * t1.val + 1) (2 * k.val)) (offF fl (wL L).val (2 * t1.val + 1) (2 * k.val)) 3 8) (shapeCast S16 (pair1_last.sl.v1985 d L tab k r g1 g2 hR hin) hc16) = AccMath.accVec (rowF fl tab (wL L).val (2 * t1.val + 1) (2 * k.val)) (offF fl (wL L).val (2 * t1.val + 1) (2 * k.val)) 3 9 :=
      acc_step d L fl tab (wL L).val (2 * t1.val + 1) (2 * k.val) 0 _ hRA ⟨8, by decide⟩ ⟨3, by decide⟩ _ rfl _ hw_v1955 _ (k1_off74_form ..) _ hc16
    have s_A3_9 : addf (AccMath.accVec (rowF fl tab (wL L).val (2 * t1.val + 1) (2 * k.val)) (offF fl (wL L).val (2 * t1.val + 1) (2 * k.val)) 3 9) (shapeCast S16 (pair1_last.sl.v2021 d L tab k r g1 g2 hR hin) hc16) = AccMath.accVec (rowF fl tab (wL L).val (2 * t1.val + 1) (2 * k.val)) (offF fl (wL L).val (2 * t1.val + 1) (2 * k.val)) 3 10 :=
      acc_step d L fl tab (wL L).val (2 * t1.val + 1) (2 * k.val) 0 _ hRA ⟨9, by decide⟩ ⟨3, by decide⟩ _ rfl _ hw_v1991 _ (k1_off75_form ..) _ hc16
    have s_A3_10 : addf (AccMath.accVec (rowF fl tab (wL L).val (2 * t1.val + 1) (2 * k.val)) (offF fl (wL L).val (2 * t1.val + 1) (2 * k.val)) 3 10) (shapeCast S16 (pair1_last.sl.v2057 d L tab k r g1 g2 hR hin) hc16) = AccMath.accVec (rowF fl tab (wL L).val (2 * t1.val + 1) (2 * k.val)) (offF fl (wL L).val (2 * t1.val + 1) (2 * k.val)) 3 11 :=
      acc_step d L fl tab (wL L).val (2 * t1.val + 1) (2 * k.val) 0 _ hRA ⟨10, by decide⟩ ⟨3, by decide⟩ _ rfl _ hw_v2027 _ (k1_off76_form ..) _ hc16
    have s_A3_11 : addf (AccMath.accVec (rowF fl tab (wL L).val (2 * t1.val + 1) (2 * k.val)) (offF fl (wL L).val (2 * t1.val + 1) (2 * k.val)) 3 11) (shapeCast S16 (pair1_last.sl.v2093 d L tab k r g1 g2 hR hin) hc16) = AccMath.accVec (rowF fl tab (wL L).val (2 * t1.val + 1) (2 * k.val)) (offF fl (wL L).val (2 * t1.val + 1) (2 * k.val)) 3 12 :=
      acc_step d L fl tab (wL L).val (2 * t1.val + 1) (2 * k.val) 0 _ hRA ⟨11, by decide⟩ ⟨3, by decide⟩ _ rfl _ hw_v2063 _ (k1_off77_form ..) _ hc16
    have s_A3_12 : addf (AccMath.accVec (rowF fl tab (wL L).val (2 * t1.val + 1) (2 * k.val)) (offF fl (wL L).val (2 * t1.val + 1) (2 * k.val)) 3 12) (shapeCast S16 (pair1_last.sl.v2129 d L tab k r g1 g2 hR hin) hc16) = AccMath.accVec (rowF fl tab (wL L).val (2 * t1.val + 1) (2 * k.val)) (offF fl (wL L).val (2 * t1.val + 1) (2 * k.val)) 3 13 :=
      acc_step d L fl tab (wL L).val (2 * t1.val + 1) (2 * k.val) 0 _ hRA ⟨12, by decide⟩ ⟨3, by decide⟩ _ rfl _ hw_v2099 _ (k1_off78_form ..) _ hc16
    have s_A3_13 : addf (AccMath.accVec (rowF fl tab (wL L).val (2 * t1.val + 1) (2 * k.val)) (offF fl (wL L).val (2 * t1.val + 1) (2 * k.val)) 3 13) (shapeCast S16 (pair1_last.sl.v2165 d L tab k r g1 g2 hR hin) hc16) = AccMath.accVec (rowF fl tab (wL L).val (2 * t1.val + 1) (2 * k.val)) (offF fl (wL L).val (2 * t1.val + 1) (2 * k.val)) 3 14 :=
      acc_step d L fl tab (wL L).val (2 * t1.val + 1) (2 * k.val) 0 _ hRA ⟨13, by decide⟩ ⟨3, by decide⟩ _ rfl _ hw_v2135 _ (k1_off79_form ..) _ hc16
    have s_A3_14 : addf (AccMath.accVec (rowF fl tab (wL L).val (2 * t1.val + 1) (2 * k.val)) (offF fl (wL L).val (2 * t1.val + 1) (2 * k.val)) 3 14) (shapeCast S16 (pair1_last.sl.v2201 d L tab k r g1 g2 hR hin) hc16) = AccMath.accVec (rowF fl tab (wL L).val (2 * t1.val + 1) (2 * k.val)) (offF fl (wL L).val (2 * t1.val + 1) (2 * k.val)) 3 15 :=
      acc_step d L fl tab (wL L).val (2 * t1.val + 1) (2 * k.val) 0 _ hRA ⟨14, by decide⟩ ⟨3, by decide⟩ _ rfl _ hw_v2171 _ (k1_off80_form ..) _ hc16
    have s_A3_15 : addf (AccMath.accVec (rowF fl tab (wL L).val (2 * t1.val + 1) (2 * k.val)) (offF fl (wL L).val (2 * t1.val + 1) (2 * k.val)) 3 15) (shapeCast S16 (pair1_last.sl.v2237 d L tab k r g1 g2 hR hin) hc16) = AccMath.accVec (rowF fl tab (wL L).val (2 * t1.val + 1) (2 * k.val)) (offF fl (wL L).val (2 * t1.val + 1) (2 * k.val)) 3 16 :=
      acc_step d L fl tab (wL L).val (2 * t1.val + 1) (2 * k.val) 0 _ hRA ⟨15, by decide⟩ ⟨3, by decide⟩ _ rfl _ hw_v2207 _ (k1_off81_form ..) _ hc16
    have s_A3_16 : addf (AccMath.accVec (rowF fl tab (wL L).val (2 * t1.val + 1) (2 * k.val)) (offF fl (wL L).val (2 * t1.val + 1) (2 * k.val)) 3 16) (shapeCast S16 (pair1_last.sl.v1697_1 d L tab k r g1 g2 hR hin) hc16) = AccMath.accVec (rowF fl tab (wL L).val (2 * t1.val + 1) (2 * k.val)) (offF fl (wL L).val (2 * t1.val + 1) (2 * k.val)) 3 17 :=
      acc_step d L fl tab (wL L).val (2 * t1.val + 1) (2 * k.val) 0 _ hRA ⟨16, by decide⟩ ⟨3, by decide⟩ _ rfl _ hw_v1667_1 _ (k1_off66_form ..) _ hc16
    have s_A3_17 : addf (AccMath.accVec (rowF fl tab (wL L).val (2 * t1.val + 1) (2 * k.val)) (offF fl (wL L).val (2 * t1.val + 1) (2 * k.val)) 3 17) (shapeCast S16 (pair1_last.sl.v1733_1 d L tab k r g1 g2 hR hin) hc16) = AccMath.accVec (rowF fl tab (wL L).val (2 * t1.val + 1) (2 * k.val)) (offF fl (wL L).val (2 * t1.val + 1) (2 * k.val)) 3 18 :=
      acc_step d L fl tab (wL L).val (2 * t1.val + 1) (2 * k.val) 0 _ hRA ⟨17, by decide⟩ ⟨3, by decide⟩ _ rfl _ hw_v1703_1 _ (k1_off67_form ..) _ hc16
    have s_A3_18 : addf (AccMath.accVec (rowF fl tab (wL L).val (2 * t1.val + 1) (2 * k.val)) (offF fl (wL L).val (2 * t1.val + 1) (2 * k.val)) 3 18) (shapeCast S16 (pair1_last.sl.v1769_1 d L tab k r g1 g2 hR hin) hc16) = AccMath.accVec (rowF fl tab (wL L).val (2 * t1.val + 1) (2 * k.val)) (offF fl (wL L).val (2 * t1.val + 1) (2 * k.val)) 3 19 :=
      acc_step d L fl tab (wL L).val (2 * t1.val + 1) (2 * k.val) 0 _ hRA ⟨18, by decide⟩ ⟨3, by decide⟩ _ rfl _ hw_v1739_1 _ (k1_off68_form ..) _ hc16
    have s_A3_19 : addf (AccMath.accVec (rowF fl tab (wL L).val (2 * t1.val + 1) (2 * k.val)) (offF fl (wL L).val (2 * t1.val + 1) (2 * k.val)) 3 19) (shapeCast S16 (pair1_last.sl.v1805_1 d L tab k r g1 g2 hR hin) hc16) = AccMath.accVec (rowF fl tab (wL L).val (2 * t1.val + 1) (2 * k.val)) (offF fl (wL L).val (2 * t1.val + 1) (2 * k.val)) 3 20 :=
      acc_step d L fl tab (wL L).val (2 * t1.val + 1) (2 * k.val) 0 _ hRA ⟨19, by decide⟩ ⟨3, by decide⟩ _ rfl _ hw_v1775_1 _ (k1_off69_form ..) _ hc16
    have s_A3_20 : addf (AccMath.accVec (rowF fl tab (wL L).val (2 * t1.val + 1) (2 * k.val)) (offF fl (wL L).val (2 * t1.val + 1) (2 * k.val)) 3 20) (shapeCast S16 (pair1_last.sl.v1841_1 d L tab k r g1 g2 hR hin) hc16) = AccMath.accVec (rowF fl tab (wL L).val (2 * t1.val + 1) (2 * k.val)) (offF fl (wL L).val (2 * t1.val + 1) (2 * k.val)) 3 21 :=
      acc_step d L fl tab (wL L).val (2 * t1.val + 1) (2 * k.val) 0 _ hRA ⟨20, by decide⟩ ⟨3, by decide⟩ _ rfl _ hw_v1811_1 _ (k1_off70_form ..) _ hc16
    have s_A3_21 : addf (AccMath.accVec (rowF fl tab (wL L).val (2 * t1.val + 1) (2 * k.val)) (offF fl (wL L).val (2 * t1.val + 1) (2 * k.val)) 3 21) (shapeCast S16 (pair1_last.sl.v1877_1 d L tab k r g1 g2 hR hin) hc16) = AccMath.accVec (rowF fl tab (wL L).val (2 * t1.val + 1) (2 * k.val)) (offF fl (wL L).val (2 * t1.val + 1) (2 * k.val)) 3 22 :=
      acc_step d L fl tab (wL L).val (2 * t1.val + 1) (2 * k.val) 0 _ hRA ⟨21, by decide⟩ ⟨3, by decide⟩ _ rfl _ hw_v1847_1 _ (k1_off71_form ..) _ hc16
    have s_A3_22 : addf (AccMath.accVec (rowF fl tab (wL L).val (2 * t1.val + 1) (2 * k.val)) (offF fl (wL L).val (2 * t1.val + 1) (2 * k.val)) 3 22) (shapeCast S16 (pair1_last.sl.v1913_1 d L tab k r g1 g2 hR hin) hc16) = AccMath.accVec (rowF fl tab (wL L).val (2 * t1.val + 1) (2 * k.val)) (offF fl (wL L).val (2 * t1.val + 1) (2 * k.val)) 3 23 :=
      acc_step d L fl tab (wL L).val (2 * t1.val + 1) (2 * k.val) 0 _ hRA ⟨22, by decide⟩ ⟨3, by decide⟩ _ rfl _ hw_v1883_1 _ (k1_off72_form ..) _ hc16
    have s_A3_23 : addf (AccMath.accVec (rowF fl tab (wL L).val (2 * t1.val + 1) (2 * k.val)) (offF fl (wL L).val (2 * t1.val + 1) (2 * k.val)) 3 23) (shapeCast S16 (pair1_last.sl.v1949_1 d L tab k r g1 g2 hR hin) hc16) = AccMath.accVec (rowF fl tab (wL L).val (2 * t1.val + 1) (2 * k.val)) (offF fl (wL L).val (2 * t1.val + 1) (2 * k.val)) 3 24 :=
      acc_step d L fl tab (wL L).val (2 * t1.val + 1) (2 * k.val) 0 _ hRA ⟨23, by decide⟩ ⟨3, by decide⟩ _ rfl _ hw_v1919_1 _ (k1_off73_form ..) _ hc16
    have s_A3_24 : addf (AccMath.accVec (rowF fl tab (wL L).val (2 * t1.val + 1) (2 * k.val)) (offF fl (wL L).val (2 * t1.val + 1) (2 * k.val)) 3 24) (shapeCast S16 (pair1_last.sl.v1985_1 d L tab k r g1 g2 hR hin) hc16) = AccMath.accVec (rowF fl tab (wL L).val (2 * t1.val + 1) (2 * k.val)) (offF fl (wL L).val (2 * t1.val + 1) (2 * k.val)) 3 25 :=
      acc_step d L fl tab (wL L).val (2 * t1.val + 1) (2 * k.val) 0 _ hRA ⟨24, by decide⟩ ⟨3, by decide⟩ _ rfl _ hw_v1955_1 _ (k1_off74_form ..) _ hc16
    have s_A3_25 : addf (AccMath.accVec (rowF fl tab (wL L).val (2 * t1.val + 1) (2 * k.val)) (offF fl (wL L).val (2 * t1.val + 1) (2 * k.val)) 3 25) (shapeCast S16 (pair1_last.sl.v2021_1 d L tab k r g1 g2 hR hin) hc16) = AccMath.accVec (rowF fl tab (wL L).val (2 * t1.val + 1) (2 * k.val)) (offF fl (wL L).val (2 * t1.val + 1) (2 * k.val)) 3 26 :=
      acc_step d L fl tab (wL L).val (2 * t1.val + 1) (2 * k.val) 0 _ hRA ⟨25, by decide⟩ ⟨3, by decide⟩ _ rfl _ hw_v1991_1 _ (k1_off75_form ..) _ hc16
    have s_A3_26 : addf (AccMath.accVec (rowF fl tab (wL L).val (2 * t1.val + 1) (2 * k.val)) (offF fl (wL L).val (2 * t1.val + 1) (2 * k.val)) 3 26) (shapeCast S16 (pair1_last.sl.v2057_1 d L tab k r g1 g2 hR hin) hc16) = AccMath.accVec (rowF fl tab (wL L).val (2 * t1.val + 1) (2 * k.val)) (offF fl (wL L).val (2 * t1.val + 1) (2 * k.val)) 3 27 :=
      acc_step d L fl tab (wL L).val (2 * t1.val + 1) (2 * k.val) 0 _ hRA ⟨26, by decide⟩ ⟨3, by decide⟩ _ rfl _ hw_v2027_1 _ (k1_off76_form ..) _ hc16
    have s_A3_27 : addf (AccMath.accVec (rowF fl tab (wL L).val (2 * t1.val + 1) (2 * k.val)) (offF fl (wL L).val (2 * t1.val + 1) (2 * k.val)) 3 27) (shapeCast S16 (pair1_last.sl.v2093_1 d L tab k r g1 g2 hR hin) hc16) = AccMath.accVec (rowF fl tab (wL L).val (2 * t1.val + 1) (2 * k.val)) (offF fl (wL L).val (2 * t1.val + 1) (2 * k.val)) 3 28 :=
      acc_step d L fl tab (wL L).val (2 * t1.val + 1) (2 * k.val) 0 _ hRA ⟨27, by decide⟩ ⟨3, by decide⟩ _ rfl _ hw_v2063_1 _ (k1_off77_form ..) _ hc16
    have s_A3_28 : addf (AccMath.accVec (rowF fl tab (wL L).val (2 * t1.val + 1) (2 * k.val)) (offF fl (wL L).val (2 * t1.val + 1) (2 * k.val)) 3 28) (shapeCast S16 (pair1_last.sl.v2129_1 d L tab k r g1 g2 hR hin) hc16) = AccMath.accVec (rowF fl tab (wL L).val (2 * t1.val + 1) (2 * k.val)) (offF fl (wL L).val (2 * t1.val + 1) (2 * k.val)) 3 29 :=
      acc_step d L fl tab (wL L).val (2 * t1.val + 1) (2 * k.val) 0 _ hRA ⟨28, by decide⟩ ⟨3, by decide⟩ _ rfl _ hw_v2099_1 _ (k1_off78_form ..) _ hc16
    have s_A3_29 : addf (AccMath.accVec (rowF fl tab (wL L).val (2 * t1.val + 1) (2 * k.val)) (offF fl (wL L).val (2 * t1.val + 1) (2 * k.val)) 3 29) (shapeCast S16 (pair1_last.sl.v2165_1 d L tab k r g1 g2 hR hin) hc16) = AccMath.accVec (rowF fl tab (wL L).val (2 * t1.val + 1) (2 * k.val)) (offF fl (wL L).val (2 * t1.val + 1) (2 * k.val)) 3 30 :=
      acc_step d L fl tab (wL L).val (2 * t1.val + 1) (2 * k.val) 0 _ hRA ⟨29, by decide⟩ ⟨3, by decide⟩ _ rfl _ hw_v2135_1 _ (k1_off79_form ..) _ hc16
    have s_A3_30 : addf (AccMath.accVec (rowF fl tab (wL L).val (2 * t1.val + 1) (2 * k.val)) (offF fl (wL L).val (2 * t1.val + 1) (2 * k.val)) 3 30) (shapeCast S16 (pair1_last.sl.v2201_1 d L tab k r g1 g2 hR hin) hc16) = AccMath.accVec (rowF fl tab (wL L).val (2 * t1.val + 1) (2 * k.val)) (offF fl (wL L).val (2 * t1.val + 1) (2 * k.val)) 3 31 :=
      acc_step d L fl tab (wL L).val (2 * t1.val + 1) (2 * k.val) 0 _ hRA ⟨30, by decide⟩ ⟨3, by decide⟩ _ rfl _ hw_v2171_1 _ (k1_off80_form ..) _ hc16
    have s_A3_31 : addf (AccMath.accVec (rowF fl tab (wL L).val (2 * t1.val + 1) (2 * k.val)) (offF fl (wL L).val (2 * t1.val + 1) (2 * k.val)) 3 31) (shapeCast S16 (pair1_last.sl.v2237_1 d L tab k r g1 g2 hR hin) hc16) = AccMath.accVec (rowF fl tab (wL L).val (2 * t1.val + 1) (2 * k.val)) (offF fl (wL L).val (2 * t1.val + 1) (2 * k.val)) 3 32 :=
      acc_step d L fl tab (wL L).val (2 * t1.val + 1) (2 * k.val) 0 _ hRA ⟨31, by decide⟩ ⟨3, by decide⟩ _ rfl _ hw_v2207_1 _ (k1_off81_form ..) _ hc16
    have s_A3_32 : addf (AccMath.accVec (rowF fl tab (wL L).val (2 * t1.val + 1) (2 * k.val)) (offF fl (wL L).val (2 * t1.val + 1) (2 * k.val)) 3 32) (shapeCast S16 (pair1_last.sl.v1697_2 d L tab k r g1 g2 hR hin) hc16) = AccMath.accVec (rowF fl tab (wL L).val (2 * t1.val + 1) (2 * k.val)) (offF fl (wL L).val (2 * t1.val + 1) (2 * k.val)) 3 33 :=
      acc_step d L fl tab (wL L).val (2 * t1.val + 1) (2 * k.val) 0 _ hRA ⟨32, by decide⟩ ⟨3, by decide⟩ _ rfl _ hw_v1667_2 _ (k1_off66_form ..) _ hc16
    have s_A3_33 : addf (AccMath.accVec (rowF fl tab (wL L).val (2 * t1.val + 1) (2 * k.val)) (offF fl (wL L).val (2 * t1.val + 1) (2 * k.val)) 3 33) (shapeCast S16 (pair1_last.sl.v1733_2 d L tab k r g1 g2 hR hin) hc16) = AccMath.accVec (rowF fl tab (wL L).val (2 * t1.val + 1) (2 * k.val)) (offF fl (wL L).val (2 * t1.val + 1) (2 * k.val)) 3 34 :=
      acc_step d L fl tab (wL L).val (2 * t1.val + 1) (2 * k.val) 0 _ hRA ⟨33, by decide⟩ ⟨3, by decide⟩ _ rfl _ hw_v1703_2 _ (k1_off67_form ..) _ hc16
    have s_A3_34 : addf (AccMath.accVec (rowF fl tab (wL L).val (2 * t1.val + 1) (2 * k.val)) (offF fl (wL L).val (2 * t1.val + 1) (2 * k.val)) 3 34) (shapeCast S16 (pair1_last.sl.v1769_2 d L tab k r g1 g2 hR hin) hc16) = AccMath.accVec (rowF fl tab (wL L).val (2 * t1.val + 1) (2 * k.val)) (offF fl (wL L).val (2 * t1.val + 1) (2 * k.val)) 3 35 :=
      acc_step d L fl tab (wL L).val (2 * t1.val + 1) (2 * k.val) 0 _ hRA ⟨34, by decide⟩ ⟨3, by decide⟩ _ rfl _ hw_v1739_2 _ (k1_off68_form ..) _ hc16
    have s_A3_35 : addf (AccMath.accVec (rowF fl tab (wL L).val (2 * t1.val + 1) (2 * k.val)) (offF fl (wL L).val (2 * t1.val + 1) (2 * k.val)) 3 35) (shapeCast S16 (pair1_last.sl.v1805_2 d L tab k r g1 g2 hR hin) hc16) = AccMath.accVec (rowF fl tab (wL L).val (2 * t1.val + 1) (2 * k.val)) (offF fl (wL L).val (2 * t1.val + 1) (2 * k.val)) 3 36 :=
      acc_step d L fl tab (wL L).val (2 * t1.val + 1) (2 * k.val) 0 _ hRA ⟨35, by decide⟩ ⟨3, by decide⟩ _ rfl _ hw_v1775_2 _ (k1_off69_form ..) _ hc16
    have s_A3_36 : addf (AccMath.accVec (rowF fl tab (wL L).val (2 * t1.val + 1) (2 * k.val)) (offF fl (wL L).val (2 * t1.val + 1) (2 * k.val)) 3 36) (shapeCast S16 (pair1_last.sl.v1841_2 d L tab k r g1 g2 hR hin) hc16) = AccMath.accVec (rowF fl tab (wL L).val (2 * t1.val + 1) (2 * k.val)) (offF fl (wL L).val (2 * t1.val + 1) (2 * k.val)) 3 37 :=
      acc_step d L fl tab (wL L).val (2 * t1.val + 1) (2 * k.val) 0 _ hRA ⟨36, by decide⟩ ⟨3, by decide⟩ _ rfl _ hw_v1811_2 _ (k1_off70_form ..) _ hc16
    have s_A3_37 : addf (AccMath.accVec (rowF fl tab (wL L).val (2 * t1.val + 1) (2 * k.val)) (offF fl (wL L).val (2 * t1.val + 1) (2 * k.val)) 3 37) (shapeCast S16 (pair1_last.sl.v1877_2 d L tab k r g1 g2 hR hin) hc16) = AccMath.accVec (rowF fl tab (wL L).val (2 * t1.val + 1) (2 * k.val)) (offF fl (wL L).val (2 * t1.val + 1) (2 * k.val)) 3 38 :=
      acc_step d L fl tab (wL L).val (2 * t1.val + 1) (2 * k.val) 0 _ hRA ⟨37, by decide⟩ ⟨3, by decide⟩ _ rfl _ hw_v1847_2 _ (k1_off71_form ..) _ hc16
    have s_A3_38 : addf (AccMath.accVec (rowF fl tab (wL L).val (2 * t1.val + 1) (2 * k.val)) (offF fl (wL L).val (2 * t1.val + 1) (2 * k.val)) 3 38) (shapeCast S16 (pair1_last.sl.v1913_2 d L tab k r g1 g2 hR hin) hc16) = AccMath.accVec (rowF fl tab (wL L).val (2 * t1.val + 1) (2 * k.val)) (offF fl (wL L).val (2 * t1.val + 1) (2 * k.val)) 3 39 :=
      acc_step d L fl tab (wL L).val (2 * t1.val + 1) (2 * k.val) 0 _ hRA ⟨38, by decide⟩ ⟨3, by decide⟩ _ rfl _ hw_v1883_2 _ (k1_off72_form ..) _ hc16
    have s_A3_39 : addf (AccMath.accVec (rowF fl tab (wL L).val (2 * t1.val + 1) (2 * k.val)) (offF fl (wL L).val (2 * t1.val + 1) (2 * k.val)) 3 39) (shapeCast S16 (pair1_last.sl.v1949_2 d L tab k r g1 g2 hR hin) hc16) = AccMath.accVec (rowF fl tab (wL L).val (2 * t1.val + 1) (2 * k.val)) (offF fl (wL L).val (2 * t1.val + 1) (2 * k.val)) 3 40 :=
      acc_step d L fl tab (wL L).val (2 * t1.val + 1) (2 * k.val) 0 _ hRA ⟨39, by decide⟩ ⟨3, by decide⟩ _ rfl _ hw_v1919_2 _ (k1_off73_form ..) _ hc16
    have s_A3_40 : addf (AccMath.accVec (rowF fl tab (wL L).val (2 * t1.val + 1) (2 * k.val)) (offF fl (wL L).val (2 * t1.val + 1) (2 * k.val)) 3 40) (shapeCast S16 (pair1_last.sl.v1985_2 d L tab k r g1 g2 hR hin) hc16) = AccMath.accVec (rowF fl tab (wL L).val (2 * t1.val + 1) (2 * k.val)) (offF fl (wL L).val (2 * t1.val + 1) (2 * k.val)) 3 41 :=
      acc_step d L fl tab (wL L).val (2 * t1.val + 1) (2 * k.val) 0 _ hRA ⟨40, by decide⟩ ⟨3, by decide⟩ _ rfl _ hw_v1955_2 _ (k1_off74_form ..) _ hc16
    have s_A3_41 : addf (AccMath.accVec (rowF fl tab (wL L).val (2 * t1.val + 1) (2 * k.val)) (offF fl (wL L).val (2 * t1.val + 1) (2 * k.val)) 3 41) (shapeCast S16 (pair1_last.sl.v2021_2 d L tab k r g1 g2 hR hin) hc16) = AccMath.accVec (rowF fl tab (wL L).val (2 * t1.val + 1) (2 * k.val)) (offF fl (wL L).val (2 * t1.val + 1) (2 * k.val)) 3 42 :=
      acc_step d L fl tab (wL L).val (2 * t1.val + 1) (2 * k.val) 0 _ hRA ⟨41, by decide⟩ ⟨3, by decide⟩ _ rfl _ hw_v1991_2 _ (k1_off75_form ..) _ hc16
    have s_A3_42 : addf (AccMath.accVec (rowF fl tab (wL L).val (2 * t1.val + 1) (2 * k.val)) (offF fl (wL L).val (2 * t1.val + 1) (2 * k.val)) 3 42) (shapeCast S16 (pair1_last.sl.v2057_2 d L tab k r g1 g2 hR hin) hc16) = AccMath.accVec (rowF fl tab (wL L).val (2 * t1.val + 1) (2 * k.val)) (offF fl (wL L).val (2 * t1.val + 1) (2 * k.val)) 3 43 :=
      acc_step d L fl tab (wL L).val (2 * t1.val + 1) (2 * k.val) 0 _ hRA ⟨42, by decide⟩ ⟨3, by decide⟩ _ rfl _ hw_v2027_2 _ (k1_off76_form ..) _ hc16
    have s_A3_43 : addf (AccMath.accVec (rowF fl tab (wL L).val (2 * t1.val + 1) (2 * k.val)) (offF fl (wL L).val (2 * t1.val + 1) (2 * k.val)) 3 43) (shapeCast S16 (pair1_last.sl.v2093_2 d L tab k r g1 g2 hR hin) hc16) = AccMath.accVec (rowF fl tab (wL L).val (2 * t1.val + 1) (2 * k.val)) (offF fl (wL L).val (2 * t1.val + 1) (2 * k.val)) 3 44 :=
      acc_step d L fl tab (wL L).val (2 * t1.val + 1) (2 * k.val) 0 _ hRA ⟨43, by decide⟩ ⟨3, by decide⟩ _ rfl _ hw_v2063_2 _ (k1_off77_form ..) _ hc16
    have s_A3_44 : addf (AccMath.accVec (rowF fl tab (wL L).val (2 * t1.val + 1) (2 * k.val)) (offF fl (wL L).val (2 * t1.val + 1) (2 * k.val)) 3 44) (shapeCast S16 (pair1_last.sl.v2129_2 d L tab k r g1 g2 hR hin) hc16) = AccMath.accVec (rowF fl tab (wL L).val (2 * t1.val + 1) (2 * k.val)) (offF fl (wL L).val (2 * t1.val + 1) (2 * k.val)) 3 45 :=
      acc_step d L fl tab (wL L).val (2 * t1.val + 1) (2 * k.val) 0 _ hRA ⟨44, by decide⟩ ⟨3, by decide⟩ _ rfl _ hw_v2099_2 _ (k1_off78_form ..) _ hc16
    have s_A3_45 : addf (AccMath.accVec (rowF fl tab (wL L).val (2 * t1.val + 1) (2 * k.val)) (offF fl (wL L).val (2 * t1.val + 1) (2 * k.val)) 3 45) (shapeCast S16 (pair1_last.sl.v2165_2 d L tab k r g1 g2 hR hin) hc16) = AccMath.accVec (rowF fl tab (wL L).val (2 * t1.val + 1) (2 * k.val)) (offF fl (wL L).val (2 * t1.val + 1) (2 * k.val)) 3 46 :=
      acc_step d L fl tab (wL L).val (2 * t1.val + 1) (2 * k.val) 0 _ hRA ⟨45, by decide⟩ ⟨3, by decide⟩ _ rfl _ hw_v2135_2 _ (k1_off79_form ..) _ hc16
    have s_A3_46 : addf (AccMath.accVec (rowF fl tab (wL L).val (2 * t1.val + 1) (2 * k.val)) (offF fl (wL L).val (2 * t1.val + 1) (2 * k.val)) 3 46) (shapeCast S16 (pair1_last.sl.v2201_2 d L tab k r g1 g2 hR hin) hc16) = AccMath.accVec (rowF fl tab (wL L).val (2 * t1.val + 1) (2 * k.val)) (offF fl (wL L).val (2 * t1.val + 1) (2 * k.val)) 3 47 :=
      acc_step d L fl tab (wL L).val (2 * t1.val + 1) (2 * k.val) 0 _ hRA ⟨46, by decide⟩ ⟨3, by decide⟩ _ rfl _ hw_v2171_2 _ (k1_off80_form ..) _ hc16
    have s_A3_47 : addf (AccMath.accVec (rowF fl tab (wL L).val (2 * t1.val + 1) (2 * k.val)) (offF fl (wL L).val (2 * t1.val + 1) (2 * k.val)) 3 47) (shapeCast S16 (pair1_last.sl.v2237_2 d L tab k r g1 g2 hR hin) hc16) = AccMath.accVec (rowF fl tab (wL L).val (2 * t1.val + 1) (2 * k.val)) (offF fl (wL L).val (2 * t1.val + 1) (2 * k.val)) 3 48 :=
      acc_step d L fl tab (wL L).val (2 * t1.val + 1) (2 * k.val) 0 _ hRA ⟨47, by decide⟩ ⟨3, by decide⟩ _ rfl _ hw_v2207_2 _ (k1_off81_form ..) _ hc16
    have s_A3_48 : addf (AccMath.accVec (rowF fl tab (wL L).val (2 * t1.val + 1) (2 * k.val)) (offF fl (wL L).val (2 * t1.val + 1) (2 * k.val)) 3 48) (shapeCast S16 (pair1_last.sl.v1486 d L tab k r g1 g2 hR hin) hc16) = AccMath.accVec (rowF fl tab (wL L).val (2 * t1.val + 1) (2 * k.val)) (offF fl (wL L).val (2 * t1.val + 1) (2 * k.val)) 3 49 :=
      acc_step d L fl tab (wL L).val (2 * t1.val + 1) (2 * k.val) 0 _ hRA ⟨48, by decide⟩ ⟨3, by decide⟩ _ rfl _ hw_v1456 _ (k1_off83_form ..) _ hc16
    have s_A3_49 : addf (AccMath.accVec (rowF fl tab (wL L).val (2 * t1.val + 1) (2 * k.val)) (offF fl (wL L).val (2 * t1.val + 1) (2 * k.val)) 3 49) (shapeCast S16 (pair1_last.sl.v1520 d L tab k r g1 g2 hR hin) hc16) = AccMath.accVec (rowF fl tab (wL L).val (2 * t1.val + 1) (2 * k.val)) (offF fl (wL L).val (2 * t1.val + 1) (2 * k.val)) 3 50 :=
      acc_step d L fl tab (wL L).val (2 * t1.val + 1) (2 * k.val) 0 _ hRA ⟨49, by decide⟩ ⟨3, by decide⟩ _ rfl _ hw_v1490 _ (k1_off84_form ..) _ hc16
    have hP_A3 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val)) (offF fl (wL L).val (2 * t1.val + 1) (2 * k.val)) 3 0) (shapeCast S16 (pair1_last.sl.v1697 d L tab k r g1 g2 hR hin) hc16)) (shapeCast S16 (pair1_last.sl.v1733 d L tab k r g1 g2 hR hin) hc16)) (shapeCast S16 (pair1_last.sl.v1769 d L tab k r g1 g2 hR hin) hc16)) (shapeCast S16 (pair1_last.sl.v1805 d L tab k r g1 g2 hR hin) hc16)) (shapeCast S16 (pair1_last.sl.v1841 d L tab k r g1 g2 hR hin) hc16)) (shapeCast S16 (pair1_last.sl.v1877 d L tab k r g1 g2 hR hin) hc16)) (shapeCast S16 (pair1_last.sl.v1913 d L tab k r g1 g2 hR hin) hc16)) (shapeCast S16 (pair1_last.sl.v1949 d L tab k r g1 g2 hR hin) hc16)) (shapeCast S16 (pair1_last.sl.v1985 d L tab k r g1 g2 hR hin) hc16)) (shapeCast S16 (pair1_last.sl.v2021 d L tab k r g1 g2 hR hin) hc16)) (shapeCast S16 (pair1_last.sl.v2057 d L tab k r g1 g2 hR hin) hc16)) (shapeCast S16 (pair1_last.sl.v2093 d L tab k r g1 g2 hR hin) hc16)) (shapeCast S16 (pair1_last.sl.v2129 d L tab k r g1 g2 hR hin) hc16)) (shapeCast S16 (pair1_last.sl.v2165 d L tab k r g1 g2 hR hin) hc16)) (shapeCast S16 (pair1_last.sl.v2201 d L tab k r g1 g2 hR hin) hc16)) (shapeCast S16 (pair1_last.sl.v2237 d L tab k r g1 g2 hR hin) hc16)) (shapeCast S16 (pair1_last.sl.v1697_1 d L tab k r g1 g2 hR hin) hc16)) (shapeCast S16 (pair1_last.sl.v1733_1 d L tab k r g1 g2 hR hin) hc16)) (shapeCast S16 (pair1_last.sl.v1769_1 d L tab k r g1 g2 hR hin) hc16)) (shapeCast S16 (pair1_last.sl.v1805_1 d L tab k r g1 g2 hR hin) hc16)) (shapeCast S16 (pair1_last.sl.v1841_1 d L tab k r g1 g2 hR hin) hc16)) (shapeCast S16 (pair1_last.sl.v1877_1 d L tab k r g1 g2 hR hin) hc16)) (shapeCast S16 (pair1_last.sl.v1913_1 d L tab k r g1 g2 hR hin) hc16)) (shapeCast S16 (pair1_last.sl.v1949_1 d L tab k r g1 g2 hR hin) hc16)) (shapeCast S16 (pair1_last.sl.v1985_1 d L tab k r g1 g2 hR hin) hc16)) (shapeCast S16 (pair1_last.sl.v2021_1 d L tab k r g1 g2 hR hin) hc16)) (shapeCast S16 (pair1_last.sl.v2057_1 d L tab k r g1 g2 hR hin) hc16)) (shapeCast S16 (pair1_last.sl.v2093_1 d L tab k r g1 g2 hR hin) hc16)) (shapeCast S16 (pair1_last.sl.v2129_1 d L tab k r g1 g2 hR hin) hc16)) (shapeCast S16 (pair1_last.sl.v2165_1 d L tab k r g1 g2 hR hin) hc16)) (shapeCast S16 (pair1_last.sl.v2201_1 d L tab k r g1 g2 hR hin) hc16)) (shapeCast S16 (pair1_last.sl.v2237_1 d L tab k r g1 g2 hR hin) hc16)) (shapeCast S16 (pair1_last.sl.v1697_2 d L tab k r g1 g2 hR hin) hc16)) (shapeCast S16 (pair1_last.sl.v1733_2 d L tab k r g1 g2 hR hin) hc16)) (shapeCast S16 (pair1_last.sl.v1769_2 d L tab k r g1 g2 hR hin) hc16)) (shapeCast S16 (pair1_last.sl.v1805_2 d L tab k r g1 g2 hR hin) hc16)) (shapeCast S16 (pair1_last.sl.v1841_2 d L tab k r g1 g2 hR hin) hc16)) (shapeCast S16 (pair1_last.sl.v1877_2 d L tab k r g1 g2 hR hin) hc16)) (shapeCast S16 (pair1_last.sl.v1913_2 d L tab k r g1 g2 hR hin) hc16)) (shapeCast S16 (pair1_last.sl.v1949_2 d L tab k r g1 g2 hR hin) hc16)) (shapeCast S16 (pair1_last.sl.v1985_2 d L tab k r g1 g2 hR hin) hc16)) (shapeCast S16 (pair1_last.sl.v2021_2 d L tab k r g1 g2 hR hin) hc16)) (shapeCast S16 (pair1_last.sl.v2057_2 d L tab k r g1 g2 hR hin) hc16)) (shapeCast S16 (pair1_last.sl.v2093_2 d L tab k r g1 g2 hR hin) hc16)) (shapeCast S16 (pair1_last.sl.v2129_2 d L tab k r g1 g2 hR hin) hc16)) (shapeCast S16 (pair1_last.sl.v2165_2 d L tab k r g1 g2 hR hin) hc16)) (shapeCast S16 (pair1_last.sl.v2201_2 d L tab k r g1 g2 hR hin) hc16)) (shapeCast S16 (pair1_last.sl.v2237_2 d L tab k r g1 g2 hR hin) hc16)) (shapeCast S16 (pair1_last.sl.v1486 d L tab k r g1 g2 hR hin) hc16)) (shapeCast S16 (pair1_last.sl.v1520 d L tab k r g1 g2 hR hin) hc16)) hc1 x = Spec.bagPartial fl tab (128 * (wL L).val + 16 * (2 * t1.val + 1) + (2 * k.val)) (16 * 3 + (x 2).val) 50 := fun x => by
      rw [s_A3_0, s_A3_1, s_A3_2, s_A3_3, s_A3_4, s_A3_5, s_A3_6, s_A3_7, s_A3_8, s_A3_9, s_A3_10, s_A3_11, s_A3_12, s_A3_13, s_A3_14, s_A3_15, s_A3_16, s_A3_17, s_A3_18, s_A3_19, s_A3_20, s_A3_21, s_A3_22, s_A3_23, s_A3_24, s_A3_25, s_A3_26, s_A3_27, s_A3_28, s_A3_29, s_A3_30, s_A3_31, s_A3_32, s_A3_33, s_A3_34, s_A3_35, s_A3_36, s_A3_37, s_A3_38, s_A3_39, s_A3_40, s_A3_41, s_A3_42, s_A3_43, s_A3_44, s_A3_45, s_A3_46, s_A3_47, s_A3_48, s_A3_49]
      exact payload_ok fl tab (wL L).val (2 * t1.val + 1) (2 * k.val) ⟨3, by decide⟩ hc1 x
    have s_B0_0 : addf (AccMath.accVec (rowF fl tab (wL L).val (2 * t1.val + 1) (2 * k.val + 1)) (offF fl (wL L).val (2 * t1.val + 1) (2 * k.val + 1)) 0 0) (shapeCast S16 (pair1_last.sl.v1673_3 d L tab k r g1 g2 hR hin) hc16) = AccMath.accVec (rowF fl tab (wL L).val (2 * t1.val + 1) (2 * k.val + 1)) (offF fl (wL L).val (2 * t1.val + 1) (2 * k.val + 1)) 0 1 :=
      acc_step d L fl tab (wL L).val (2 * t1.val + 1) (2 * k.val + 1) 1 _ hRB ⟨0, by decide⟩ ⟨0, by decide⟩ _ rfl _ hw_v1667_3 _ (k1_off93_form ..) _ hc16
    have s_B0_1 : addf (AccMath.accVec (rowF fl tab (wL L).val (2 * t1.val + 1) (2 * k.val + 1)) (offF fl (wL L).val (2 * t1.val + 1) (2 * k.val + 1)) 0 1) (shapeCast S16 (pair1_last.sl.v1709_3 d L tab k r g1 g2 hR hin) hc16) = AccMath.accVec (rowF fl tab (wL L).val (2 * t1.val + 1) (2 * k.val + 1)) (offF fl (wL L).val (2 * t1.val + 1) (2 * k.val + 1)) 0 2 :=
      acc_step d L fl tab (wL L).val (2 * t1.val + 1) (2 * k.val + 1) 1 _ hRB ⟨1, by decide⟩ ⟨0, by decide⟩ _ rfl _ hw_v1703_3 _ (k1_off94_form ..) _ hc16
    have s_B0_2 : addf (AccMath.accVec (rowF fl tab (wL L).val (2 * t1.val + 1) (2 * k.val + 1)) (offF fl (wL L).val (2 * t1.val + 1) (2 * k.val + 1)) 0 2) (shapeCast S16 (pair1_last.sl.v1745_3 d L tab k r g1 g2 hR hin) hc16) = AccMath.accVec (rowF fl tab (wL L).val (2 * t1.val + 1) (2 * k.val + 1)) (offF fl (wL L).val (2 * t1.val + 1) (2 * k.val + 1)) 0 3 :=
      acc_step d L fl tab (wL L).val (2 * t1.val + 1) (2 * k.val + 1) 1 _ hRB ⟨2, by decide⟩ ⟨0, by decide⟩ _ rfl _ hw_v1739_3 _ (k1_off95_form ..) _ hc16
    have s_B0_3 : addf (AccMath.accVec (rowF fl tab (wL L).val (2 * t1.val + 1) (2 * k.val + 1)) (offF fl (wL L).val (2 * t1.val + 1) (2 * k.val + 1)) 0 3) (shapeCast S16 (pair1_last.sl.v1781_3 d L tab k r g1 g2 hR hin) hc16) = AccMath.accVec (rowF fl tab (wL L).val (2 * t1.val + 1) (2 * k.val + 1)) (offF fl (wL L).val (2 * t1.val + 1) (2 * k.val + 1)) 0 4 :=
      acc_step d L fl tab (wL L).val (2 * t1.val + 1) (2 * k.val + 1) 1 _ hRB ⟨3, by decide⟩ ⟨0, by decide⟩ _ rfl _ hw_v1775_3 _ (k1_off96_form ..) _ hc16
    have s_B0_4 : addf (AccMath.accVec (rowF fl tab (wL L).val (2 * t1.val + 1) (2 * k.val + 1)) (offF fl (wL L).val (2 * t1.val + 1) (2 * k.val + 1)) 0 4) (shapeCast S16 (pair1_last.sl.v1817_3 d L tab k r g1 g2 hR hin) hc16) = AccMath.accVec (rowF fl tab (wL L).val (2 * t1.val + 1) (2 * k.val + 1)) (offF fl (wL L).val (2 * t1.val + 1) (2 * k.val + 1)) 0 5 :=
      acc_step d L fl tab (wL L).val (2 * t1.val + 1) (2 * k.val + 1) 1 _ hRB ⟨4, by decide⟩ ⟨0, by decide⟩ _ rfl _ hw_v1811_3 _ (k1_off97_form ..) _ hc16
    have s_B0_5 : addf (AccMath.accVec (rowF fl tab (wL L).val (2 * t1.val + 1) (2 * k.val + 1)) (offF fl (wL L).val (2 * t1.val + 1) (2 * k.val + 1)) 0 5) (shapeCast S16 (pair1_last.sl.v1853_3 d L tab k r g1 g2 hR hin) hc16) = AccMath.accVec (rowF fl tab (wL L).val (2 * t1.val + 1) (2 * k.val + 1)) (offF fl (wL L).val (2 * t1.val + 1) (2 * k.val + 1)) 0 6 :=
      acc_step d L fl tab (wL L).val (2 * t1.val + 1) (2 * k.val + 1) 1 _ hRB ⟨5, by decide⟩ ⟨0, by decide⟩ _ rfl _ hw_v1847_3 _ (k1_off98_form ..) _ hc16
    have s_B0_6 : addf (AccMath.accVec (rowF fl tab (wL L).val (2 * t1.val + 1) (2 * k.val + 1)) (offF fl (wL L).val (2 * t1.val + 1) (2 * k.val + 1)) 0 6) (shapeCast S16 (pair1_last.sl.v1889_3 d L tab k r g1 g2 hR hin) hc16) = AccMath.accVec (rowF fl tab (wL L).val (2 * t1.val + 1) (2 * k.val + 1)) (offF fl (wL L).val (2 * t1.val + 1) (2 * k.val + 1)) 0 7 :=
      acc_step d L fl tab (wL L).val (2 * t1.val + 1) (2 * k.val + 1) 1 _ hRB ⟨6, by decide⟩ ⟨0, by decide⟩ _ rfl _ hw_v1883_3 _ (k1_off99_form ..) _ hc16
    have s_B0_7 : addf (AccMath.accVec (rowF fl tab (wL L).val (2 * t1.val + 1) (2 * k.val + 1)) (offF fl (wL L).val (2 * t1.val + 1) (2 * k.val + 1)) 0 7) (shapeCast S16 (pair1_last.sl.v1925_3 d L tab k r g1 g2 hR hin) hc16) = AccMath.accVec (rowF fl tab (wL L).val (2 * t1.val + 1) (2 * k.val + 1)) (offF fl (wL L).val (2 * t1.val + 1) (2 * k.val + 1)) 0 8 :=
      acc_step d L fl tab (wL L).val (2 * t1.val + 1) (2 * k.val + 1) 1 _ hRB ⟨7, by decide⟩ ⟨0, by decide⟩ _ rfl _ hw_v1919_3 _ (k1_off100_form ..) _ hc16
    have s_B0_8 : addf (AccMath.accVec (rowF fl tab (wL L).val (2 * t1.val + 1) (2 * k.val + 1)) (offF fl (wL L).val (2 * t1.val + 1) (2 * k.val + 1)) 0 8) (shapeCast S16 (pair1_last.sl.v1961_3 d L tab k r g1 g2 hR hin) hc16) = AccMath.accVec (rowF fl tab (wL L).val (2 * t1.val + 1) (2 * k.val + 1)) (offF fl (wL L).val (2 * t1.val + 1) (2 * k.val + 1)) 0 9 :=
      acc_step d L fl tab (wL L).val (2 * t1.val + 1) (2 * k.val + 1) 1 _ hRB ⟨8, by decide⟩ ⟨0, by decide⟩ _ rfl _ hw_v1955_3 _ (k1_off101_form ..) _ hc16
    have s_B0_9 : addf (AccMath.accVec (rowF fl tab (wL L).val (2 * t1.val + 1) (2 * k.val + 1)) (offF fl (wL L).val (2 * t1.val + 1) (2 * k.val + 1)) 0 9) (shapeCast S16 (pair1_last.sl.v1997_3 d L tab k r g1 g2 hR hin) hc16) = AccMath.accVec (rowF fl tab (wL L).val (2 * t1.val + 1) (2 * k.val + 1)) (offF fl (wL L).val (2 * t1.val + 1) (2 * k.val + 1)) 0 10 :=
      acc_step d L fl tab (wL L).val (2 * t1.val + 1) (2 * k.val + 1) 1 _ hRB ⟨9, by decide⟩ ⟨0, by decide⟩ _ rfl _ hw_v1991_3 _ (k1_off102_form ..) _ hc16
    have s_B0_10 : addf (AccMath.accVec (rowF fl tab (wL L).val (2 * t1.val + 1) (2 * k.val + 1)) (offF fl (wL L).val (2 * t1.val + 1) (2 * k.val + 1)) 0 10) (shapeCast S16 (pair1_last.sl.v2033_3 d L tab k r g1 g2 hR hin) hc16) = AccMath.accVec (rowF fl tab (wL L).val (2 * t1.val + 1) (2 * k.val + 1)) (offF fl (wL L).val (2 * t1.val + 1) (2 * k.val + 1)) 0 11 :=
      acc_step d L fl tab (wL L).val (2 * t1.val + 1) (2 * k.val + 1) 1 _ hRB ⟨10, by decide⟩ ⟨0, by decide⟩ _ rfl _ hw_v2027_3 _ (k1_off103_form ..) _ hc16
    have s_B0_11 : addf (AccMath.accVec (rowF fl tab (wL L).val (2 * t1.val + 1) (2 * k.val + 1)) (offF fl (wL L).val (2 * t1.val + 1) (2 * k.val + 1)) 0 11) (shapeCast S16 (pair1_last.sl.v2069_3 d L tab k r g1 g2 hR hin) hc16) = AccMath.accVec (rowF fl tab (wL L).val (2 * t1.val + 1) (2 * k.val + 1)) (offF fl (wL L).val (2 * t1.val + 1) (2 * k.val + 1)) 0 12 :=
      acc_step d L fl tab (wL L).val (2 * t1.val + 1) (2 * k.val + 1) 1 _ hRB ⟨11, by decide⟩ ⟨0, by decide⟩ _ rfl _ hw_v2063_3 _ (k1_off104_form ..) _ hc16
    have s_B0_12 : addf (AccMath.accVec (rowF fl tab (wL L).val (2 * t1.val + 1) (2 * k.val + 1)) (offF fl (wL L).val (2 * t1.val + 1) (2 * k.val + 1)) 0 12) (shapeCast S16 (pair1_last.sl.v2105_3 d L tab k r g1 g2 hR hin) hc16) = AccMath.accVec (rowF fl tab (wL L).val (2 * t1.val + 1) (2 * k.val + 1)) (offF fl (wL L).val (2 * t1.val + 1) (2 * k.val + 1)) 0 13 :=
      acc_step d L fl tab (wL L).val (2 * t1.val + 1) (2 * k.val + 1) 1 _ hRB ⟨12, by decide⟩ ⟨0, by decide⟩ _ rfl _ hw_v2099_3 _ (k1_off105_form ..) _ hc16
    have s_B0_13 : addf (AccMath.accVec (rowF fl tab (wL L).val (2 * t1.val + 1) (2 * k.val + 1)) (offF fl (wL L).val (2 * t1.val + 1) (2 * k.val + 1)) 0 13) (shapeCast S16 (pair1_last.sl.v2141_3 d L tab k r g1 g2 hR hin) hc16) = AccMath.accVec (rowF fl tab (wL L).val (2 * t1.val + 1) (2 * k.val + 1)) (offF fl (wL L).val (2 * t1.val + 1) (2 * k.val + 1)) 0 14 :=
      acc_step d L fl tab (wL L).val (2 * t1.val + 1) (2 * k.val + 1) 1 _ hRB ⟨13, by decide⟩ ⟨0, by decide⟩ _ rfl _ hw_v2135_3 _ (k1_off106_form ..) _ hc16
    have s_B0_14 : addf (AccMath.accVec (rowF fl tab (wL L).val (2 * t1.val + 1) (2 * k.val + 1)) (offF fl (wL L).val (2 * t1.val + 1) (2 * k.val + 1)) 0 14) (shapeCast S16 (pair1_last.sl.v2177_3 d L tab k r g1 g2 hR hin) hc16) = AccMath.accVec (rowF fl tab (wL L).val (2 * t1.val + 1) (2 * k.val + 1)) (offF fl (wL L).val (2 * t1.val + 1) (2 * k.val + 1)) 0 15 :=
      acc_step d L fl tab (wL L).val (2 * t1.val + 1) (2 * k.val + 1) 1 _ hRB ⟨14, by decide⟩ ⟨0, by decide⟩ _ rfl _ hw_v2171_3 _ (k1_off107_form ..) _ hc16
    have s_B0_15 : addf (AccMath.accVec (rowF fl tab (wL L).val (2 * t1.val + 1) (2 * k.val + 1)) (offF fl (wL L).val (2 * t1.val + 1) (2 * k.val + 1)) 0 15) (shapeCast S16 (pair1_last.sl.v2213_3 d L tab k r g1 g2 hR hin) hc16) = AccMath.accVec (rowF fl tab (wL L).val (2 * t1.val + 1) (2 * k.val + 1)) (offF fl (wL L).val (2 * t1.val + 1) (2 * k.val + 1)) 0 16 :=
      acc_step d L fl tab (wL L).val (2 * t1.val + 1) (2 * k.val + 1) 1 _ hRB ⟨15, by decide⟩ ⟨0, by decide⟩ _ rfl _ hw_v2207_3 _ (k1_off108_form ..) _ hc16
    have s_B0_16 : addf (AccMath.accVec (rowF fl tab (wL L).val (2 * t1.val + 1) (2 * k.val + 1)) (offF fl (wL L).val (2 * t1.val + 1) (2 * k.val + 1)) 0 16) (shapeCast S16 (pair1_last.sl.v1673_4 d L tab k r g1 g2 hR hin) hc16) = AccMath.accVec (rowF fl tab (wL L).val (2 * t1.val + 1) (2 * k.val + 1)) (offF fl (wL L).val (2 * t1.val + 1) (2 * k.val + 1)) 0 17 :=
      acc_step d L fl tab (wL L).val (2 * t1.val + 1) (2 * k.val + 1) 1 _ hRB ⟨16, by decide⟩ ⟨0, by decide⟩ _ rfl _ hw_v1667_4 _ (k1_off93_form ..) _ hc16
    have s_B0_17 : addf (AccMath.accVec (rowF fl tab (wL L).val (2 * t1.val + 1) (2 * k.val + 1)) (offF fl (wL L).val (2 * t1.val + 1) (2 * k.val + 1)) 0 17) (shapeCast S16 (pair1_last.sl.v1709_4 d L tab k r g1 g2 hR hin) hc16) = AccMath.accVec (rowF fl tab (wL L).val (2 * t1.val + 1) (2 * k.val + 1)) (offF fl (wL L).val (2 * t1.val + 1) (2 * k.val + 1)) 0 18 :=
      acc_step d L fl tab (wL L).val (2 * t1.val + 1) (2 * k.val + 1) 1 _ hRB ⟨17, by decide⟩ ⟨0, by decide⟩ _ rfl _ hw_v1703_4 _ (k1_off94_form ..) _ hc16
    have s_B0_18 : addf (AccMath.accVec (rowF fl tab (wL L).val (2 * t1.val + 1) (2 * k.val + 1)) (offF fl (wL L).val (2 * t1.val + 1) (2 * k.val + 1)) 0 18) (shapeCast S16 (pair1_last.sl.v1745_4 d L tab k r g1 g2 hR hin) hc16) = AccMath.accVec (rowF fl tab (wL L).val (2 * t1.val + 1) (2 * k.val + 1)) (offF fl (wL L).val (2 * t1.val + 1) (2 * k.val + 1)) 0 19 :=
      acc_step d L fl tab (wL L).val (2 * t1.val + 1) (2 * k.val + 1) 1 _ hRB ⟨18, by decide⟩ ⟨0, by decide⟩ _ rfl _ hw_v1739_4 _ (k1_off95_form ..) _ hc16
    have s_B0_19 : addf (AccMath.accVec (rowF fl tab (wL L).val (2 * t1.val + 1) (2 * k.val + 1)) (offF fl (wL L).val (2 * t1.val + 1) (2 * k.val + 1)) 0 19) (shapeCast S16 (pair1_last.sl.v1781_4 d L tab k r g1 g2 hR hin) hc16) = AccMath.accVec (rowF fl tab (wL L).val (2 * t1.val + 1) (2 * k.val + 1)) (offF fl (wL L).val (2 * t1.val + 1) (2 * k.val + 1)) 0 20 :=
      acc_step d L fl tab (wL L).val (2 * t1.val + 1) (2 * k.val + 1) 1 _ hRB ⟨19, by decide⟩ ⟨0, by decide⟩ _ rfl _ hw_v1775_4 _ (k1_off96_form ..) _ hc16
    have s_B0_20 : addf (AccMath.accVec (rowF fl tab (wL L).val (2 * t1.val + 1) (2 * k.val + 1)) (offF fl (wL L).val (2 * t1.val + 1) (2 * k.val + 1)) 0 20) (shapeCast S16 (pair1_last.sl.v1817_4 d L tab k r g1 g2 hR hin) hc16) = AccMath.accVec (rowF fl tab (wL L).val (2 * t1.val + 1) (2 * k.val + 1)) (offF fl (wL L).val (2 * t1.val + 1) (2 * k.val + 1)) 0 21 :=
      acc_step d L fl tab (wL L).val (2 * t1.val + 1) (2 * k.val + 1) 1 _ hRB ⟨20, by decide⟩ ⟨0, by decide⟩ _ rfl _ hw_v1811_4 _ (k1_off97_form ..) _ hc16
    have s_B0_21 : addf (AccMath.accVec (rowF fl tab (wL L).val (2 * t1.val + 1) (2 * k.val + 1)) (offF fl (wL L).val (2 * t1.val + 1) (2 * k.val + 1)) 0 21) (shapeCast S16 (pair1_last.sl.v1853_4 d L tab k r g1 g2 hR hin) hc16) = AccMath.accVec (rowF fl tab (wL L).val (2 * t1.val + 1) (2 * k.val + 1)) (offF fl (wL L).val (2 * t1.val + 1) (2 * k.val + 1)) 0 22 :=
      acc_step d L fl tab (wL L).val (2 * t1.val + 1) (2 * k.val + 1) 1 _ hRB ⟨21, by decide⟩ ⟨0, by decide⟩ _ rfl _ hw_v1847_4 _ (k1_off98_form ..) _ hc16
    have s_B0_22 : addf (AccMath.accVec (rowF fl tab (wL L).val (2 * t1.val + 1) (2 * k.val + 1)) (offF fl (wL L).val (2 * t1.val + 1) (2 * k.val + 1)) 0 22) (shapeCast S16 (pair1_last.sl.v1889_4 d L tab k r g1 g2 hR hin) hc16) = AccMath.accVec (rowF fl tab (wL L).val (2 * t1.val + 1) (2 * k.val + 1)) (offF fl (wL L).val (2 * t1.val + 1) (2 * k.val + 1)) 0 23 :=
      acc_step d L fl tab (wL L).val (2 * t1.val + 1) (2 * k.val + 1) 1 _ hRB ⟨22, by decide⟩ ⟨0, by decide⟩ _ rfl _ hw_v1883_4 _ (k1_off99_form ..) _ hc16
    have s_B0_23 : addf (AccMath.accVec (rowF fl tab (wL L).val (2 * t1.val + 1) (2 * k.val + 1)) (offF fl (wL L).val (2 * t1.val + 1) (2 * k.val + 1)) 0 23) (shapeCast S16 (pair1_last.sl.v1925_4 d L tab k r g1 g2 hR hin) hc16) = AccMath.accVec (rowF fl tab (wL L).val (2 * t1.val + 1) (2 * k.val + 1)) (offF fl (wL L).val (2 * t1.val + 1) (2 * k.val + 1)) 0 24 :=
      acc_step d L fl tab (wL L).val (2 * t1.val + 1) (2 * k.val + 1) 1 _ hRB ⟨23, by decide⟩ ⟨0, by decide⟩ _ rfl _ hw_v1919_4 _ (k1_off100_form ..) _ hc16
    have s_B0_24 : addf (AccMath.accVec (rowF fl tab (wL L).val (2 * t1.val + 1) (2 * k.val + 1)) (offF fl (wL L).val (2 * t1.val + 1) (2 * k.val + 1)) 0 24) (shapeCast S16 (pair1_last.sl.v1961_4 d L tab k r g1 g2 hR hin) hc16) = AccMath.accVec (rowF fl tab (wL L).val (2 * t1.val + 1) (2 * k.val + 1)) (offF fl (wL L).val (2 * t1.val + 1) (2 * k.val + 1)) 0 25 :=
      acc_step d L fl tab (wL L).val (2 * t1.val + 1) (2 * k.val + 1) 1 _ hRB ⟨24, by decide⟩ ⟨0, by decide⟩ _ rfl _ hw_v1955_4 _ (k1_off101_form ..) _ hc16
    have s_B0_25 : addf (AccMath.accVec (rowF fl tab (wL L).val (2 * t1.val + 1) (2 * k.val + 1)) (offF fl (wL L).val (2 * t1.val + 1) (2 * k.val + 1)) 0 25) (shapeCast S16 (pair1_last.sl.v1997_4 d L tab k r g1 g2 hR hin) hc16) = AccMath.accVec (rowF fl tab (wL L).val (2 * t1.val + 1) (2 * k.val + 1)) (offF fl (wL L).val (2 * t1.val + 1) (2 * k.val + 1)) 0 26 :=
      acc_step d L fl tab (wL L).val (2 * t1.val + 1) (2 * k.val + 1) 1 _ hRB ⟨25, by decide⟩ ⟨0, by decide⟩ _ rfl _ hw_v1991_4 _ (k1_off102_form ..) _ hc16
    have s_B0_26 : addf (AccMath.accVec (rowF fl tab (wL L).val (2 * t1.val + 1) (2 * k.val + 1)) (offF fl (wL L).val (2 * t1.val + 1) (2 * k.val + 1)) 0 26) (shapeCast S16 (pair1_last.sl.v2033_4 d L tab k r g1 g2 hR hin) hc16) = AccMath.accVec (rowF fl tab (wL L).val (2 * t1.val + 1) (2 * k.val + 1)) (offF fl (wL L).val (2 * t1.val + 1) (2 * k.val + 1)) 0 27 :=
      acc_step d L fl tab (wL L).val (2 * t1.val + 1) (2 * k.val + 1) 1 _ hRB ⟨26, by decide⟩ ⟨0, by decide⟩ _ rfl _ hw_v2027_4 _ (k1_off103_form ..) _ hc16
    have s_B0_27 : addf (AccMath.accVec (rowF fl tab (wL L).val (2 * t1.val + 1) (2 * k.val + 1)) (offF fl (wL L).val (2 * t1.val + 1) (2 * k.val + 1)) 0 27) (shapeCast S16 (pair1_last.sl.v2069_4 d L tab k r g1 g2 hR hin) hc16) = AccMath.accVec (rowF fl tab (wL L).val (2 * t1.val + 1) (2 * k.val + 1)) (offF fl (wL L).val (2 * t1.val + 1) (2 * k.val + 1)) 0 28 :=
      acc_step d L fl tab (wL L).val (2 * t1.val + 1) (2 * k.val + 1) 1 _ hRB ⟨27, by decide⟩ ⟨0, by decide⟩ _ rfl _ hw_v2063_4 _ (k1_off104_form ..) _ hc16
    have s_B0_28 : addf (AccMath.accVec (rowF fl tab (wL L).val (2 * t1.val + 1) (2 * k.val + 1)) (offF fl (wL L).val (2 * t1.val + 1) (2 * k.val + 1)) 0 28) (shapeCast S16 (pair1_last.sl.v2105_4 d L tab k r g1 g2 hR hin) hc16) = AccMath.accVec (rowF fl tab (wL L).val (2 * t1.val + 1) (2 * k.val + 1)) (offF fl (wL L).val (2 * t1.val + 1) (2 * k.val + 1)) 0 29 :=
      acc_step d L fl tab (wL L).val (2 * t1.val + 1) (2 * k.val + 1) 1 _ hRB ⟨28, by decide⟩ ⟨0, by decide⟩ _ rfl _ hw_v2099_4 _ (k1_off105_form ..) _ hc16
    have s_B0_29 : addf (AccMath.accVec (rowF fl tab (wL L).val (2 * t1.val + 1) (2 * k.val + 1)) (offF fl (wL L).val (2 * t1.val + 1) (2 * k.val + 1)) 0 29) (shapeCast S16 (pair1_last.sl.v2141_4 d L tab k r g1 g2 hR hin) hc16) = AccMath.accVec (rowF fl tab (wL L).val (2 * t1.val + 1) (2 * k.val + 1)) (offF fl (wL L).val (2 * t1.val + 1) (2 * k.val + 1)) 0 30 :=
      acc_step d L fl tab (wL L).val (2 * t1.val + 1) (2 * k.val + 1) 1 _ hRB ⟨29, by decide⟩ ⟨0, by decide⟩ _ rfl _ hw_v2135_4 _ (k1_off106_form ..) _ hc16
    have s_B0_30 : addf (AccMath.accVec (rowF fl tab (wL L).val (2 * t1.val + 1) (2 * k.val + 1)) (offF fl (wL L).val (2 * t1.val + 1) (2 * k.val + 1)) 0 30) (shapeCast S16 (pair1_last.sl.v2177_4 d L tab k r g1 g2 hR hin) hc16) = AccMath.accVec (rowF fl tab (wL L).val (2 * t1.val + 1) (2 * k.val + 1)) (offF fl (wL L).val (2 * t1.val + 1) (2 * k.val + 1)) 0 31 :=
      acc_step d L fl tab (wL L).val (2 * t1.val + 1) (2 * k.val + 1) 1 _ hRB ⟨30, by decide⟩ ⟨0, by decide⟩ _ rfl _ hw_v2171_4 _ (k1_off107_form ..) _ hc16
    have s_B0_31 : addf (AccMath.accVec (rowF fl tab (wL L).val (2 * t1.val + 1) (2 * k.val + 1)) (offF fl (wL L).val (2 * t1.val + 1) (2 * k.val + 1)) 0 31) (shapeCast S16 (pair1_last.sl.v2213_4 d L tab k r g1 g2 hR hin) hc16) = AccMath.accVec (rowF fl tab (wL L).val (2 * t1.val + 1) (2 * k.val + 1)) (offF fl (wL L).val (2 * t1.val + 1) (2 * k.val + 1)) 0 32 :=
      acc_step d L fl tab (wL L).val (2 * t1.val + 1) (2 * k.val + 1) 1 _ hRB ⟨31, by decide⟩ ⟨0, by decide⟩ _ rfl _ hw_v2207_4 _ (k1_off108_form ..) _ hc16
    have s_B0_32 : addf (AccMath.accVec (rowF fl tab (wL L).val (2 * t1.val + 1) (2 * k.val + 1)) (offF fl (wL L).val (2 * t1.val + 1) (2 * k.val + 1)) 0 32) (shapeCast S16 (pair1_last.sl.v1673_5 d L tab k r g1 g2 hR hin) hc16) = AccMath.accVec (rowF fl tab (wL L).val (2 * t1.val + 1) (2 * k.val + 1)) (offF fl (wL L).val (2 * t1.val + 1) (2 * k.val + 1)) 0 33 :=
      acc_step d L fl tab (wL L).val (2 * t1.val + 1) (2 * k.val + 1) 1 _ hRB ⟨32, by decide⟩ ⟨0, by decide⟩ _ rfl _ hw_v1667_5 _ (k1_off93_form ..) _ hc16
    have s_B0_33 : addf (AccMath.accVec (rowF fl tab (wL L).val (2 * t1.val + 1) (2 * k.val + 1)) (offF fl (wL L).val (2 * t1.val + 1) (2 * k.val + 1)) 0 33) (shapeCast S16 (pair1_last.sl.v1709_5 d L tab k r g1 g2 hR hin) hc16) = AccMath.accVec (rowF fl tab (wL L).val (2 * t1.val + 1) (2 * k.val + 1)) (offF fl (wL L).val (2 * t1.val + 1) (2 * k.val + 1)) 0 34 :=
      acc_step d L fl tab (wL L).val (2 * t1.val + 1) (2 * k.val + 1) 1 _ hRB ⟨33, by decide⟩ ⟨0, by decide⟩ _ rfl _ hw_v1703_5 _ (k1_off94_form ..) _ hc16
    have s_B0_34 : addf (AccMath.accVec (rowF fl tab (wL L).val (2 * t1.val + 1) (2 * k.val + 1)) (offF fl (wL L).val (2 * t1.val + 1) (2 * k.val + 1)) 0 34) (shapeCast S16 (pair1_last.sl.v1745_5 d L tab k r g1 g2 hR hin) hc16) = AccMath.accVec (rowF fl tab (wL L).val (2 * t1.val + 1) (2 * k.val + 1)) (offF fl (wL L).val (2 * t1.val + 1) (2 * k.val + 1)) 0 35 :=
      acc_step d L fl tab (wL L).val (2 * t1.val + 1) (2 * k.val + 1) 1 _ hRB ⟨34, by decide⟩ ⟨0, by decide⟩ _ rfl _ hw_v1739_5 _ (k1_off95_form ..) _ hc16
    have s_B0_35 : addf (AccMath.accVec (rowF fl tab (wL L).val (2 * t1.val + 1) (2 * k.val + 1)) (offF fl (wL L).val (2 * t1.val + 1) (2 * k.val + 1)) 0 35) (shapeCast S16 (pair1_last.sl.v1781_5 d L tab k r g1 g2 hR hin) hc16) = AccMath.accVec (rowF fl tab (wL L).val (2 * t1.val + 1) (2 * k.val + 1)) (offF fl (wL L).val (2 * t1.val + 1) (2 * k.val + 1)) 0 36 :=
      acc_step d L fl tab (wL L).val (2 * t1.val + 1) (2 * k.val + 1) 1 _ hRB ⟨35, by decide⟩ ⟨0, by decide⟩ _ rfl _ hw_v1775_5 _ (k1_off96_form ..) _ hc16
    have s_B0_36 : addf (AccMath.accVec (rowF fl tab (wL L).val (2 * t1.val + 1) (2 * k.val + 1)) (offF fl (wL L).val (2 * t1.val + 1) (2 * k.val + 1)) 0 36) (shapeCast S16 (pair1_last.sl.v1817_5 d L tab k r g1 g2 hR hin) hc16) = AccMath.accVec (rowF fl tab (wL L).val (2 * t1.val + 1) (2 * k.val + 1)) (offF fl (wL L).val (2 * t1.val + 1) (2 * k.val + 1)) 0 37 :=
      acc_step d L fl tab (wL L).val (2 * t1.val + 1) (2 * k.val + 1) 1 _ hRB ⟨36, by decide⟩ ⟨0, by decide⟩ _ rfl _ hw_v1811_5 _ (k1_off97_form ..) _ hc16
    have s_B0_37 : addf (AccMath.accVec (rowF fl tab (wL L).val (2 * t1.val + 1) (2 * k.val + 1)) (offF fl (wL L).val (2 * t1.val + 1) (2 * k.val + 1)) 0 37) (shapeCast S16 (pair1_last.sl.v1853_5 d L tab k r g1 g2 hR hin) hc16) = AccMath.accVec (rowF fl tab (wL L).val (2 * t1.val + 1) (2 * k.val + 1)) (offF fl (wL L).val (2 * t1.val + 1) (2 * k.val + 1)) 0 38 :=
      acc_step d L fl tab (wL L).val (2 * t1.val + 1) (2 * k.val + 1) 1 _ hRB ⟨37, by decide⟩ ⟨0, by decide⟩ _ rfl _ hw_v1847_5 _ (k1_off98_form ..) _ hc16
    have s_B0_38 : addf (AccMath.accVec (rowF fl tab (wL L).val (2 * t1.val + 1) (2 * k.val + 1)) (offF fl (wL L).val (2 * t1.val + 1) (2 * k.val + 1)) 0 38) (shapeCast S16 (pair1_last.sl.v1889_5 d L tab k r g1 g2 hR hin) hc16) = AccMath.accVec (rowF fl tab (wL L).val (2 * t1.val + 1) (2 * k.val + 1)) (offF fl (wL L).val (2 * t1.val + 1) (2 * k.val + 1)) 0 39 :=
      acc_step d L fl tab (wL L).val (2 * t1.val + 1) (2 * k.val + 1) 1 _ hRB ⟨38, by decide⟩ ⟨0, by decide⟩ _ rfl _ hw_v1883_5 _ (k1_off99_form ..) _ hc16
    have s_B0_39 : addf (AccMath.accVec (rowF fl tab (wL L).val (2 * t1.val + 1) (2 * k.val + 1)) (offF fl (wL L).val (2 * t1.val + 1) (2 * k.val + 1)) 0 39) (shapeCast S16 (pair1_last.sl.v1925_5 d L tab k r g1 g2 hR hin) hc16) = AccMath.accVec (rowF fl tab (wL L).val (2 * t1.val + 1) (2 * k.val + 1)) (offF fl (wL L).val (2 * t1.val + 1) (2 * k.val + 1)) 0 40 :=
      acc_step d L fl tab (wL L).val (2 * t1.val + 1) (2 * k.val + 1) 1 _ hRB ⟨39, by decide⟩ ⟨0, by decide⟩ _ rfl _ hw_v1919_5 _ (k1_off100_form ..) _ hc16
    have s_B0_40 : addf (AccMath.accVec (rowF fl tab (wL L).val (2 * t1.val + 1) (2 * k.val + 1)) (offF fl (wL L).val (2 * t1.val + 1) (2 * k.val + 1)) 0 40) (shapeCast S16 (pair1_last.sl.v1961_5 d L tab k r g1 g2 hR hin) hc16) = AccMath.accVec (rowF fl tab (wL L).val (2 * t1.val + 1) (2 * k.val + 1)) (offF fl (wL L).val (2 * t1.val + 1) (2 * k.val + 1)) 0 41 :=
      acc_step d L fl tab (wL L).val (2 * t1.val + 1) (2 * k.val + 1) 1 _ hRB ⟨40, by decide⟩ ⟨0, by decide⟩ _ rfl _ hw_v1955_5 _ (k1_off101_form ..) _ hc16
    have s_B0_41 : addf (AccMath.accVec (rowF fl tab (wL L).val (2 * t1.val + 1) (2 * k.val + 1)) (offF fl (wL L).val (2 * t1.val + 1) (2 * k.val + 1)) 0 41) (shapeCast S16 (pair1_last.sl.v1997_5 d L tab k r g1 g2 hR hin) hc16) = AccMath.accVec (rowF fl tab (wL L).val (2 * t1.val + 1) (2 * k.val + 1)) (offF fl (wL L).val (2 * t1.val + 1) (2 * k.val + 1)) 0 42 :=
      acc_step d L fl tab (wL L).val (2 * t1.val + 1) (2 * k.val + 1) 1 _ hRB ⟨41, by decide⟩ ⟨0, by decide⟩ _ rfl _ hw_v1991_5 _ (k1_off102_form ..) _ hc16
    have s_B0_42 : addf (AccMath.accVec (rowF fl tab (wL L).val (2 * t1.val + 1) (2 * k.val + 1)) (offF fl (wL L).val (2 * t1.val + 1) (2 * k.val + 1)) 0 42) (shapeCast S16 (pair1_last.sl.v2033_5 d L tab k r g1 g2 hR hin) hc16) = AccMath.accVec (rowF fl tab (wL L).val (2 * t1.val + 1) (2 * k.val + 1)) (offF fl (wL L).val (2 * t1.val + 1) (2 * k.val + 1)) 0 43 :=
      acc_step d L fl tab (wL L).val (2 * t1.val + 1) (2 * k.val + 1) 1 _ hRB ⟨42, by decide⟩ ⟨0, by decide⟩ _ rfl _ hw_v2027_5 _ (k1_off103_form ..) _ hc16
    have s_B0_43 : addf (AccMath.accVec (rowF fl tab (wL L).val (2 * t1.val + 1) (2 * k.val + 1)) (offF fl (wL L).val (2 * t1.val + 1) (2 * k.val + 1)) 0 43) (shapeCast S16 (pair1_last.sl.v2069_5 d L tab k r g1 g2 hR hin) hc16) = AccMath.accVec (rowF fl tab (wL L).val (2 * t1.val + 1) (2 * k.val + 1)) (offF fl (wL L).val (2 * t1.val + 1) (2 * k.val + 1)) 0 44 :=
      acc_step d L fl tab (wL L).val (2 * t1.val + 1) (2 * k.val + 1) 1 _ hRB ⟨43, by decide⟩ ⟨0, by decide⟩ _ rfl _ hw_v2063_5 _ (k1_off104_form ..) _ hc16
    have s_B0_44 : addf (AccMath.accVec (rowF fl tab (wL L).val (2 * t1.val + 1) (2 * k.val + 1)) (offF fl (wL L).val (2 * t1.val + 1) (2 * k.val + 1)) 0 44) (shapeCast S16 (pair1_last.sl.v2105_5 d L tab k r g1 g2 hR hin) hc16) = AccMath.accVec (rowF fl tab (wL L).val (2 * t1.val + 1) (2 * k.val + 1)) (offF fl (wL L).val (2 * t1.val + 1) (2 * k.val + 1)) 0 45 :=
      acc_step d L fl tab (wL L).val (2 * t1.val + 1) (2 * k.val + 1) 1 _ hRB ⟨44, by decide⟩ ⟨0, by decide⟩ _ rfl _ hw_v2099_5 _ (k1_off105_form ..) _ hc16
    have s_B0_45 : addf (AccMath.accVec (rowF fl tab (wL L).val (2 * t1.val + 1) (2 * k.val + 1)) (offF fl (wL L).val (2 * t1.val + 1) (2 * k.val + 1)) 0 45) (shapeCast S16 (pair1_last.sl.v2141_5 d L tab k r g1 g2 hR hin) hc16) = AccMath.accVec (rowF fl tab (wL L).val (2 * t1.val + 1) (2 * k.val + 1)) (offF fl (wL L).val (2 * t1.val + 1) (2 * k.val + 1)) 0 46 :=
      acc_step d L fl tab (wL L).val (2 * t1.val + 1) (2 * k.val + 1) 1 _ hRB ⟨45, by decide⟩ ⟨0, by decide⟩ _ rfl _ hw_v2135_5 _ (k1_off106_form ..) _ hc16
    have s_B0_46 : addf (AccMath.accVec (rowF fl tab (wL L).val (2 * t1.val + 1) (2 * k.val + 1)) (offF fl (wL L).val (2 * t1.val + 1) (2 * k.val + 1)) 0 46) (shapeCast S16 (pair1_last.sl.v2177_5 d L tab k r g1 g2 hR hin) hc16) = AccMath.accVec (rowF fl tab (wL L).val (2 * t1.val + 1) (2 * k.val + 1)) (offF fl (wL L).val (2 * t1.val + 1) (2 * k.val + 1)) 0 47 :=
      acc_step d L fl tab (wL L).val (2 * t1.val + 1) (2 * k.val + 1) 1 _ hRB ⟨46, by decide⟩ ⟨0, by decide⟩ _ rfl _ hw_v2171_5 _ (k1_off107_form ..) _ hc16
    have s_B0_47 : addf (AccMath.accVec (rowF fl tab (wL L).val (2 * t1.val + 1) (2 * k.val + 1)) (offF fl (wL L).val (2 * t1.val + 1) (2 * k.val + 1)) 0 47) (shapeCast S16 (pair1_last.sl.v2213_5 d L tab k r g1 g2 hR hin) hc16) = AccMath.accVec (rowF fl tab (wL L).val (2 * t1.val + 1) (2 * k.val + 1)) (offF fl (wL L).val (2 * t1.val + 1) (2 * k.val + 1)) 0 48 :=
      acc_step d L fl tab (wL L).val (2 * t1.val + 1) (2 * k.val + 1) 1 _ hRB ⟨47, by decide⟩ ⟨0, by decide⟩ _ rfl _ hw_v2207_5 _ (k1_off108_form ..) _ hc16
    have s_B0_48 : addf (AccMath.accVec (rowF fl tab (wL L).val (2 * t1.val + 1) (2 * k.val + 1)) (offF fl (wL L).val (2 * t1.val + 1) (2 * k.val + 1)) 0 48) (shapeCast S16 (pair1_last.sl.v1578 d L tab k r g1 g2 hR hin) hc16) = AccMath.accVec (rowF fl tab (wL L).val (2 * t1.val + 1) (2 * k.val + 1)) (offF fl (wL L).val (2 * t1.val + 1) (2 * k.val + 1)) 0 49 :=
      acc_step d L fl tab (wL L).val (2 * t1.val + 1) (2 * k.val + 1) 1 _ hRB ⟨48, by decide⟩ ⟨0, by decide⟩ _ rfl _ hw_v1572 _ (k1_off110_form ..) _ hc16
    have s_B0_49 : addf (AccMath.accVec (rowF fl tab (wL L).val (2 * t1.val + 1) (2 * k.val + 1)) (offF fl (wL L).val (2 * t1.val + 1) (2 * k.val + 1)) 0 49) (shapeCast S16 (pair1_last.sl.v1612 d L tab k r g1 g2 hR hin) hc16) = AccMath.accVec (rowF fl tab (wL L).val (2 * t1.val + 1) (2 * k.val + 1)) (offF fl (wL L).val (2 * t1.val + 1) (2 * k.val + 1)) 0 50 :=
      acc_step d L fl tab (wL L).val (2 * t1.val + 1) (2 * k.val + 1) 1 _ hRB ⟨49, by decide⟩ ⟨0, by decide⟩ _ rfl _ hw_v1606 _ (k1_off111_form ..) _ hc16
    have hP_B0 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val + 1)) (offF fl (wL L).val (2 * t1.val + 1) (2 * k.val + 1)) 0 0) (shapeCast S16 (pair1_last.sl.v1673_3 d L tab k r g1 g2 hR hin) hc16)) (shapeCast S16 (pair1_last.sl.v1709_3 d L tab k r g1 g2 hR hin) hc16)) (shapeCast S16 (pair1_last.sl.v1745_3 d L tab k r g1 g2 hR hin) hc16)) (shapeCast S16 (pair1_last.sl.v1781_3 d L tab k r g1 g2 hR hin) hc16)) (shapeCast S16 (pair1_last.sl.v1817_3 d L tab k r g1 g2 hR hin) hc16)) (shapeCast S16 (pair1_last.sl.v1853_3 d L tab k r g1 g2 hR hin) hc16)) (shapeCast S16 (pair1_last.sl.v1889_3 d L tab k r g1 g2 hR hin) hc16)) (shapeCast S16 (pair1_last.sl.v1925_3 d L tab k r g1 g2 hR hin) hc16)) (shapeCast S16 (pair1_last.sl.v1961_3 d L tab k r g1 g2 hR hin) hc16)) (shapeCast S16 (pair1_last.sl.v1997_3 d L tab k r g1 g2 hR hin) hc16)) (shapeCast S16 (pair1_last.sl.v2033_3 d L tab k r g1 g2 hR hin) hc16)) (shapeCast S16 (pair1_last.sl.v2069_3 d L tab k r g1 g2 hR hin) hc16)) (shapeCast S16 (pair1_last.sl.v2105_3 d L tab k r g1 g2 hR hin) hc16)) (shapeCast S16 (pair1_last.sl.v2141_3 d L tab k r g1 g2 hR hin) hc16)) (shapeCast S16 (pair1_last.sl.v2177_3 d L tab k r g1 g2 hR hin) hc16)) (shapeCast S16 (pair1_last.sl.v2213_3 d L tab k r g1 g2 hR hin) hc16)) (shapeCast S16 (pair1_last.sl.v1673_4 d L tab k r g1 g2 hR hin) hc16)) (shapeCast S16 (pair1_last.sl.v1709_4 d L tab k r g1 g2 hR hin) hc16)) (shapeCast S16 (pair1_last.sl.v1745_4 d L tab k r g1 g2 hR hin) hc16)) (shapeCast S16 (pair1_last.sl.v1781_4 d L tab k r g1 g2 hR hin) hc16)) (shapeCast S16 (pair1_last.sl.v1817_4 d L tab k r g1 g2 hR hin) hc16)) (shapeCast S16 (pair1_last.sl.v1853_4 d L tab k r g1 g2 hR hin) hc16)) (shapeCast S16 (pair1_last.sl.v1889_4 d L tab k r g1 g2 hR hin) hc16)) (shapeCast S16 (pair1_last.sl.v1925_4 d L tab k r g1 g2 hR hin) hc16)) (shapeCast S16 (pair1_last.sl.v1961_4 d L tab k r g1 g2 hR hin) hc16)) (shapeCast S16 (pair1_last.sl.v1997_4 d L tab k r g1 g2 hR hin) hc16)) (shapeCast S16 (pair1_last.sl.v2033_4 d L tab k r g1 g2 hR hin) hc16)) (shapeCast S16 (pair1_last.sl.v2069_4 d L tab k r g1 g2 hR hin) hc16)) (shapeCast S16 (pair1_last.sl.v2105_4 d L tab k r g1 g2 hR hin) hc16)) (shapeCast S16 (pair1_last.sl.v2141_4 d L tab k r g1 g2 hR hin) hc16)) (shapeCast S16 (pair1_last.sl.v2177_4 d L tab k r g1 g2 hR hin) hc16)) (shapeCast S16 (pair1_last.sl.v2213_4 d L tab k r g1 g2 hR hin) hc16)) (shapeCast S16 (pair1_last.sl.v1673_5 d L tab k r g1 g2 hR hin) hc16)) (shapeCast S16 (pair1_last.sl.v1709_5 d L tab k r g1 g2 hR hin) hc16)) (shapeCast S16 (pair1_last.sl.v1745_5 d L tab k r g1 g2 hR hin) hc16)) (shapeCast S16 (pair1_last.sl.v1781_5 d L tab k r g1 g2 hR hin) hc16)) (shapeCast S16 (pair1_last.sl.v1817_5 d L tab k r g1 g2 hR hin) hc16)) (shapeCast S16 (pair1_last.sl.v1853_5 d L tab k r g1 g2 hR hin) hc16)) (shapeCast S16 (pair1_last.sl.v1889_5 d L tab k r g1 g2 hR hin) hc16)) (shapeCast S16 (pair1_last.sl.v1925_5 d L tab k r g1 g2 hR hin) hc16)) (shapeCast S16 (pair1_last.sl.v1961_5 d L tab k r g1 g2 hR hin) hc16)) (shapeCast S16 (pair1_last.sl.v1997_5 d L tab k r g1 g2 hR hin) hc16)) (shapeCast S16 (pair1_last.sl.v2033_5 d L tab k r g1 g2 hR hin) hc16)) (shapeCast S16 (pair1_last.sl.v2069_5 d L tab k r g1 g2 hR hin) hc16)) (shapeCast S16 (pair1_last.sl.v2105_5 d L tab k r g1 g2 hR hin) hc16)) (shapeCast S16 (pair1_last.sl.v2141_5 d L tab k r g1 g2 hR hin) hc16)) (shapeCast S16 (pair1_last.sl.v2177_5 d L tab k r g1 g2 hR hin) hc16)) (shapeCast S16 (pair1_last.sl.v2213_5 d L tab k r g1 g2 hR hin) hc16)) (shapeCast S16 (pair1_last.sl.v1578 d L tab k r g1 g2 hR hin) hc16)) (shapeCast S16 (pair1_last.sl.v1612 d L tab k r g1 g2 hR hin) hc16)) hc1 x = Spec.bagPartial fl tab (128 * (wL L).val + 16 * (2 * t1.val + 1) + (2 * k.val + 1)) (16 * 0 + (x 2).val) 50 := fun x => by
      rw [s_B0_0, s_B0_1, s_B0_2, s_B0_3, s_B0_4, s_B0_5, s_B0_6, s_B0_7, s_B0_8, s_B0_9, s_B0_10, s_B0_11, s_B0_12, s_B0_13, s_B0_14, s_B0_15, s_B0_16, s_B0_17, s_B0_18, s_B0_19, s_B0_20, s_B0_21, s_B0_22, s_B0_23, s_B0_24, s_B0_25, s_B0_26, s_B0_27, s_B0_28, s_B0_29, s_B0_30, s_B0_31, s_B0_32, s_B0_33, s_B0_34, s_B0_35, s_B0_36, s_B0_37, s_B0_38, s_B0_39, s_B0_40, s_B0_41, s_B0_42, s_B0_43, s_B0_44, s_B0_45, s_B0_46, s_B0_47, s_B0_48, s_B0_49]
      exact payload_ok fl tab (wL L).val (2 * t1.val + 1) (2 * k.val + 1) ⟨0, by decide⟩ hc1 x
    have s_B1_0 : addf (AccMath.accVec (rowF fl tab (wL L).val (2 * t1.val + 1) (2 * k.val + 1)) (offF fl (wL L).val (2 * t1.val + 1) (2 * k.val + 1)) 1 0) (shapeCast S16 (pair1_last.sl.v1681_3 d L tab k r g1 g2 hR hin) hc16) = AccMath.accVec (rowF fl tab (wL L).val (2 * t1.val + 1) (2 * k.val + 1)) (offF fl (wL L).val (2 * t1.val + 1) (2 * k.val + 1)) 1 1 :=
      acc_step d L fl tab (wL L).val (2 * t1.val + 1) (2 * k.val + 1) 1 _ hRB ⟨0, by decide⟩ ⟨1, by decide⟩ _ rfl _ hw_v1667_3 _ (k1_off93_form ..) _ hc16
    have s_B1_1 : addf (AccMath.accVec (rowF fl tab (wL L).val (2 * t1.val + 1) (2 * k.val + 1)) (offF fl (wL L).val (2 * t1.val + 1) (2 * k.val + 1)) 1 1) (shapeCast S16 (pair1_last.sl.v1717_3 d L tab k r g1 g2 hR hin) hc16) = AccMath.accVec (rowF fl tab (wL L).val (2 * t1.val + 1) (2 * k.val + 1)) (offF fl (wL L).val (2 * t1.val + 1) (2 * k.val + 1)) 1 2 :=
      acc_step d L fl tab (wL L).val (2 * t1.val + 1) (2 * k.val + 1) 1 _ hRB ⟨1, by decide⟩ ⟨1, by decide⟩ _ rfl _ hw_v1703_3 _ (k1_off94_form ..) _ hc16
    have s_B1_2 : addf (AccMath.accVec (rowF fl tab (wL L).val (2 * t1.val + 1) (2 * k.val + 1)) (offF fl (wL L).val (2 * t1.val + 1) (2 * k.val + 1)) 1 2) (shapeCast S16 (pair1_last.sl.v1753_3 d L tab k r g1 g2 hR hin) hc16) = AccMath.accVec (rowF fl tab (wL L).val (2 * t1.val + 1) (2 * k.val + 1)) (offF fl (wL L).val (2 * t1.val + 1) (2 * k.val + 1)) 1 3 :=
      acc_step d L fl tab (wL L).val (2 * t1.val + 1) (2 * k.val + 1) 1 _ hRB ⟨2, by decide⟩ ⟨1, by decide⟩ _ rfl _ hw_v1739_3 _ (k1_off95_form ..) _ hc16
    have s_B1_3 : addf (AccMath.accVec (rowF fl tab (wL L).val (2 * t1.val + 1) (2 * k.val + 1)) (offF fl (wL L).val (2 * t1.val + 1) (2 * k.val + 1)) 1 3) (shapeCast S16 (pair1_last.sl.v1789_3 d L tab k r g1 g2 hR hin) hc16) = AccMath.accVec (rowF fl tab (wL L).val (2 * t1.val + 1) (2 * k.val + 1)) (offF fl (wL L).val (2 * t1.val + 1) (2 * k.val + 1)) 1 4 :=
      acc_step d L fl tab (wL L).val (2 * t1.val + 1) (2 * k.val + 1) 1 _ hRB ⟨3, by decide⟩ ⟨1, by decide⟩ _ rfl _ hw_v1775_3 _ (k1_off96_form ..) _ hc16
    have s_B1_4 : addf (AccMath.accVec (rowF fl tab (wL L).val (2 * t1.val + 1) (2 * k.val + 1)) (offF fl (wL L).val (2 * t1.val + 1) (2 * k.val + 1)) 1 4) (shapeCast S16 (pair1_last.sl.v1825_3 d L tab k r g1 g2 hR hin) hc16) = AccMath.accVec (rowF fl tab (wL L).val (2 * t1.val + 1) (2 * k.val + 1)) (offF fl (wL L).val (2 * t1.val + 1) (2 * k.val + 1)) 1 5 :=
      acc_step d L fl tab (wL L).val (2 * t1.val + 1) (2 * k.val + 1) 1 _ hRB ⟨4, by decide⟩ ⟨1, by decide⟩ _ rfl _ hw_v1811_3 _ (k1_off97_form ..) _ hc16
    have s_B1_5 : addf (AccMath.accVec (rowF fl tab (wL L).val (2 * t1.val + 1) (2 * k.val + 1)) (offF fl (wL L).val (2 * t1.val + 1) (2 * k.val + 1)) 1 5) (shapeCast S16 (pair1_last.sl.v1861_3 d L tab k r g1 g2 hR hin) hc16) = AccMath.accVec (rowF fl tab (wL L).val (2 * t1.val + 1) (2 * k.val + 1)) (offF fl (wL L).val (2 * t1.val + 1) (2 * k.val + 1)) 1 6 :=
      acc_step d L fl tab (wL L).val (2 * t1.val + 1) (2 * k.val + 1) 1 _ hRB ⟨5, by decide⟩ ⟨1, by decide⟩ _ rfl _ hw_v1847_3 _ (k1_off98_form ..) _ hc16
    have s_B1_6 : addf (AccMath.accVec (rowF fl tab (wL L).val (2 * t1.val + 1) (2 * k.val + 1)) (offF fl (wL L).val (2 * t1.val + 1) (2 * k.val + 1)) 1 6) (shapeCast S16 (pair1_last.sl.v1897_3 d L tab k r g1 g2 hR hin) hc16) = AccMath.accVec (rowF fl tab (wL L).val (2 * t1.val + 1) (2 * k.val + 1)) (offF fl (wL L).val (2 * t1.val + 1) (2 * k.val + 1)) 1 7 :=
      acc_step d L fl tab (wL L).val (2 * t1.val + 1) (2 * k.val + 1) 1 _ hRB ⟨6, by decide⟩ ⟨1, by decide⟩ _ rfl _ hw_v1883_3 _ (k1_off99_form ..) _ hc16
    have s_B1_7 : addf (AccMath.accVec (rowF fl tab (wL L).val (2 * t1.val + 1) (2 * k.val + 1)) (offF fl (wL L).val (2 * t1.val + 1) (2 * k.val + 1)) 1 7) (shapeCast S16 (pair1_last.sl.v1933_3 d L tab k r g1 g2 hR hin) hc16) = AccMath.accVec (rowF fl tab (wL L).val (2 * t1.val + 1) (2 * k.val + 1)) (offF fl (wL L).val (2 * t1.val + 1) (2 * k.val + 1)) 1 8 :=
      acc_step d L fl tab (wL L).val (2 * t1.val + 1) (2 * k.val + 1) 1 _ hRB ⟨7, by decide⟩ ⟨1, by decide⟩ _ rfl _ hw_v1919_3 _ (k1_off100_form ..) _ hc16
    have s_B1_8 : addf (AccMath.accVec (rowF fl tab (wL L).val (2 * t1.val + 1) (2 * k.val + 1)) (offF fl (wL L).val (2 * t1.val + 1) (2 * k.val + 1)) 1 8) (shapeCast S16 (pair1_last.sl.v1969_3 d L tab k r g1 g2 hR hin) hc16) = AccMath.accVec (rowF fl tab (wL L).val (2 * t1.val + 1) (2 * k.val + 1)) (offF fl (wL L).val (2 * t1.val + 1) (2 * k.val + 1)) 1 9 :=
      acc_step d L fl tab (wL L).val (2 * t1.val + 1) (2 * k.val + 1) 1 _ hRB ⟨8, by decide⟩ ⟨1, by decide⟩ _ rfl _ hw_v1955_3 _ (k1_off101_form ..) _ hc16
    have s_B1_9 : addf (AccMath.accVec (rowF fl tab (wL L).val (2 * t1.val + 1) (2 * k.val + 1)) (offF fl (wL L).val (2 * t1.val + 1) (2 * k.val + 1)) 1 9) (shapeCast S16 (pair1_last.sl.v2005_3 d L tab k r g1 g2 hR hin) hc16) = AccMath.accVec (rowF fl tab (wL L).val (2 * t1.val + 1) (2 * k.val + 1)) (offF fl (wL L).val (2 * t1.val + 1) (2 * k.val + 1)) 1 10 :=
      acc_step d L fl tab (wL L).val (2 * t1.val + 1) (2 * k.val + 1) 1 _ hRB ⟨9, by decide⟩ ⟨1, by decide⟩ _ rfl _ hw_v1991_3 _ (k1_off102_form ..) _ hc16
    have s_B1_10 : addf (AccMath.accVec (rowF fl tab (wL L).val (2 * t1.val + 1) (2 * k.val + 1)) (offF fl (wL L).val (2 * t1.val + 1) (2 * k.val + 1)) 1 10) (shapeCast S16 (pair1_last.sl.v2041_3 d L tab k r g1 g2 hR hin) hc16) = AccMath.accVec (rowF fl tab (wL L).val (2 * t1.val + 1) (2 * k.val + 1)) (offF fl (wL L).val (2 * t1.val + 1) (2 * k.val + 1)) 1 11 :=
      acc_step d L fl tab (wL L).val (2 * t1.val + 1) (2 * k.val + 1) 1 _ hRB ⟨10, by decide⟩ ⟨1, by decide⟩ _ rfl _ hw_v2027_3 _ (k1_off103_form ..) _ hc16
    have s_B1_11 : addf (AccMath.accVec (rowF fl tab (wL L).val (2 * t1.val + 1) (2 * k.val + 1)) (offF fl (wL L).val (2 * t1.val + 1) (2 * k.val + 1)) 1 11) (shapeCast S16 (pair1_last.sl.v2077_3 d L tab k r g1 g2 hR hin) hc16) = AccMath.accVec (rowF fl tab (wL L).val (2 * t1.val + 1) (2 * k.val + 1)) (offF fl (wL L).val (2 * t1.val + 1) (2 * k.val + 1)) 1 12 :=
      acc_step d L fl tab (wL L).val (2 * t1.val + 1) (2 * k.val + 1) 1 _ hRB ⟨11, by decide⟩ ⟨1, by decide⟩ _ rfl _ hw_v2063_3 _ (k1_off104_form ..) _ hc16
    have s_B1_12 : addf (AccMath.accVec (rowF fl tab (wL L).val (2 * t1.val + 1) (2 * k.val + 1)) (offF fl (wL L).val (2 * t1.val + 1) (2 * k.val + 1)) 1 12) (shapeCast S16 (pair1_last.sl.v2113_3 d L tab k r g1 g2 hR hin) hc16) = AccMath.accVec (rowF fl tab (wL L).val (2 * t1.val + 1) (2 * k.val + 1)) (offF fl (wL L).val (2 * t1.val + 1) (2 * k.val + 1)) 1 13 :=
      acc_step d L fl tab (wL L).val (2 * t1.val + 1) (2 * k.val + 1) 1 _ hRB ⟨12, by decide⟩ ⟨1, by decide⟩ _ rfl _ hw_v2099_3 _ (k1_off105_form ..) _ hc16
    have s_B1_13 : addf (AccMath.accVec (rowF fl tab (wL L).val (2 * t1.val + 1) (2 * k.val + 1)) (offF fl (wL L).val (2 * t1.val + 1) (2 * k.val + 1)) 1 13) (shapeCast S16 (pair1_last.sl.v2149_3 d L tab k r g1 g2 hR hin) hc16) = AccMath.accVec (rowF fl tab (wL L).val (2 * t1.val + 1) (2 * k.val + 1)) (offF fl (wL L).val (2 * t1.val + 1) (2 * k.val + 1)) 1 14 :=
      acc_step d L fl tab (wL L).val (2 * t1.val + 1) (2 * k.val + 1) 1 _ hRB ⟨13, by decide⟩ ⟨1, by decide⟩ _ rfl _ hw_v2135_3 _ (k1_off106_form ..) _ hc16
    have s_B1_14 : addf (AccMath.accVec (rowF fl tab (wL L).val (2 * t1.val + 1) (2 * k.val + 1)) (offF fl (wL L).val (2 * t1.val + 1) (2 * k.val + 1)) 1 14) (shapeCast S16 (pair1_last.sl.v2185_3 d L tab k r g1 g2 hR hin) hc16) = AccMath.accVec (rowF fl tab (wL L).val (2 * t1.val + 1) (2 * k.val + 1)) (offF fl (wL L).val (2 * t1.val + 1) (2 * k.val + 1)) 1 15 :=
      acc_step d L fl tab (wL L).val (2 * t1.val + 1) (2 * k.val + 1) 1 _ hRB ⟨14, by decide⟩ ⟨1, by decide⟩ _ rfl _ hw_v2171_3 _ (k1_off107_form ..) _ hc16
    have s_B1_15 : addf (AccMath.accVec (rowF fl tab (wL L).val (2 * t1.val + 1) (2 * k.val + 1)) (offF fl (wL L).val (2 * t1.val + 1) (2 * k.val + 1)) 1 15) (shapeCast S16 (pair1_last.sl.v2221_3 d L tab k r g1 g2 hR hin) hc16) = AccMath.accVec (rowF fl tab (wL L).val (2 * t1.val + 1) (2 * k.val + 1)) (offF fl (wL L).val (2 * t1.val + 1) (2 * k.val + 1)) 1 16 :=
      acc_step d L fl tab (wL L).val (2 * t1.val + 1) (2 * k.val + 1) 1 _ hRB ⟨15, by decide⟩ ⟨1, by decide⟩ _ rfl _ hw_v2207_3 _ (k1_off108_form ..) _ hc16
    have s_B1_16 : addf (AccMath.accVec (rowF fl tab (wL L).val (2 * t1.val + 1) (2 * k.val + 1)) (offF fl (wL L).val (2 * t1.val + 1) (2 * k.val + 1)) 1 16) (shapeCast S16 (pair1_last.sl.v1681_4 d L tab k r g1 g2 hR hin) hc16) = AccMath.accVec (rowF fl tab (wL L).val (2 * t1.val + 1) (2 * k.val + 1)) (offF fl (wL L).val (2 * t1.val + 1) (2 * k.val + 1)) 1 17 :=
      acc_step d L fl tab (wL L).val (2 * t1.val + 1) (2 * k.val + 1) 1 _ hRB ⟨16, by decide⟩ ⟨1, by decide⟩ _ rfl _ hw_v1667_4 _ (k1_off93_form ..) _ hc16
    have s_B1_17 : addf (AccMath.accVec (rowF fl tab (wL L).val (2 * t1.val + 1) (2 * k.val + 1)) (offF fl (wL L).val (2 * t1.val + 1) (2 * k.val + 1)) 1 17) (shapeCast S16 (pair1_last.sl.v1717_4 d L tab k r g1 g2 hR hin) hc16) = AccMath.accVec (rowF fl tab (wL L).val (2 * t1.val + 1) (2 * k.val + 1)) (offF fl (wL L).val (2 * t1.val + 1) (2 * k.val + 1)) 1 18 :=
      acc_step d L fl tab (wL L).val (2 * t1.val + 1) (2 * k.val + 1) 1 _ hRB ⟨17, by decide⟩ ⟨1, by decide⟩ _ rfl _ hw_v1703_4 _ (k1_off94_form ..) _ hc16
    have s_B1_18 : addf (AccMath.accVec (rowF fl tab (wL L).val (2 * t1.val + 1) (2 * k.val + 1)) (offF fl (wL L).val (2 * t1.val + 1) (2 * k.val + 1)) 1 18) (shapeCast S16 (pair1_last.sl.v1753_4 d L tab k r g1 g2 hR hin) hc16) = AccMath.accVec (rowF fl tab (wL L).val (2 * t1.val + 1) (2 * k.val + 1)) (offF fl (wL L).val (2 * t1.val + 1) (2 * k.val + 1)) 1 19 :=
      acc_step d L fl tab (wL L).val (2 * t1.val + 1) (2 * k.val + 1) 1 _ hRB ⟨18, by decide⟩ ⟨1, by decide⟩ _ rfl _ hw_v1739_4 _ (k1_off95_form ..) _ hc16
    have s_B1_19 : addf (AccMath.accVec (rowF fl tab (wL L).val (2 * t1.val + 1) (2 * k.val + 1)) (offF fl (wL L).val (2 * t1.val + 1) (2 * k.val + 1)) 1 19) (shapeCast S16 (pair1_last.sl.v1789_4 d L tab k r g1 g2 hR hin) hc16) = AccMath.accVec (rowF fl tab (wL L).val (2 * t1.val + 1) (2 * k.val + 1)) (offF fl (wL L).val (2 * t1.val + 1) (2 * k.val + 1)) 1 20 :=
      acc_step d L fl tab (wL L).val (2 * t1.val + 1) (2 * k.val + 1) 1 _ hRB ⟨19, by decide⟩ ⟨1, by decide⟩ _ rfl _ hw_v1775_4 _ (k1_off96_form ..) _ hc16
    have s_B1_20 : addf (AccMath.accVec (rowF fl tab (wL L).val (2 * t1.val + 1) (2 * k.val + 1)) (offF fl (wL L).val (2 * t1.val + 1) (2 * k.val + 1)) 1 20) (shapeCast S16 (pair1_last.sl.v1825_4 d L tab k r g1 g2 hR hin) hc16) = AccMath.accVec (rowF fl tab (wL L).val (2 * t1.val + 1) (2 * k.val + 1)) (offF fl (wL L).val (2 * t1.val + 1) (2 * k.val + 1)) 1 21 :=
      acc_step d L fl tab (wL L).val (2 * t1.val + 1) (2 * k.val + 1) 1 _ hRB ⟨20, by decide⟩ ⟨1, by decide⟩ _ rfl _ hw_v1811_4 _ (k1_off97_form ..) _ hc16
    have s_B1_21 : addf (AccMath.accVec (rowF fl tab (wL L).val (2 * t1.val + 1) (2 * k.val + 1)) (offF fl (wL L).val (2 * t1.val + 1) (2 * k.val + 1)) 1 21) (shapeCast S16 (pair1_last.sl.v1861_4 d L tab k r g1 g2 hR hin) hc16) = AccMath.accVec (rowF fl tab (wL L).val (2 * t1.val + 1) (2 * k.val + 1)) (offF fl (wL L).val (2 * t1.val + 1) (2 * k.val + 1)) 1 22 :=
      acc_step d L fl tab (wL L).val (2 * t1.val + 1) (2 * k.val + 1) 1 _ hRB ⟨21, by decide⟩ ⟨1, by decide⟩ _ rfl _ hw_v1847_4 _ (k1_off98_form ..) _ hc16
    have s_B1_22 : addf (AccMath.accVec (rowF fl tab (wL L).val (2 * t1.val + 1) (2 * k.val + 1)) (offF fl (wL L).val (2 * t1.val + 1) (2 * k.val + 1)) 1 22) (shapeCast S16 (pair1_last.sl.v1897_4 d L tab k r g1 g2 hR hin) hc16) = AccMath.accVec (rowF fl tab (wL L).val (2 * t1.val + 1) (2 * k.val + 1)) (offF fl (wL L).val (2 * t1.val + 1) (2 * k.val + 1)) 1 23 :=
      acc_step d L fl tab (wL L).val (2 * t1.val + 1) (2 * k.val + 1) 1 _ hRB ⟨22, by decide⟩ ⟨1, by decide⟩ _ rfl _ hw_v1883_4 _ (k1_off99_form ..) _ hc16
    have s_B1_23 : addf (AccMath.accVec (rowF fl tab (wL L).val (2 * t1.val + 1) (2 * k.val + 1)) (offF fl (wL L).val (2 * t1.val + 1) (2 * k.val + 1)) 1 23) (shapeCast S16 (pair1_last.sl.v1933_4 d L tab k r g1 g2 hR hin) hc16) = AccMath.accVec (rowF fl tab (wL L).val (2 * t1.val + 1) (2 * k.val + 1)) (offF fl (wL L).val (2 * t1.val + 1) (2 * k.val + 1)) 1 24 :=
      acc_step d L fl tab (wL L).val (2 * t1.val + 1) (2 * k.val + 1) 1 _ hRB ⟨23, by decide⟩ ⟨1, by decide⟩ _ rfl _ hw_v1919_4 _ (k1_off100_form ..) _ hc16
    have s_B1_24 : addf (AccMath.accVec (rowF fl tab (wL L).val (2 * t1.val + 1) (2 * k.val + 1)) (offF fl (wL L).val (2 * t1.val + 1) (2 * k.val + 1)) 1 24) (shapeCast S16 (pair1_last.sl.v1969_4 d L tab k r g1 g2 hR hin) hc16) = AccMath.accVec (rowF fl tab (wL L).val (2 * t1.val + 1) (2 * k.val + 1)) (offF fl (wL L).val (2 * t1.val + 1) (2 * k.val + 1)) 1 25 :=
      acc_step d L fl tab (wL L).val (2 * t1.val + 1) (2 * k.val + 1) 1 _ hRB ⟨24, by decide⟩ ⟨1, by decide⟩ _ rfl _ hw_v1955_4 _ (k1_off101_form ..) _ hc16
    have s_B1_25 : addf (AccMath.accVec (rowF fl tab (wL L).val (2 * t1.val + 1) (2 * k.val + 1)) (offF fl (wL L).val (2 * t1.val + 1) (2 * k.val + 1)) 1 25) (shapeCast S16 (pair1_last.sl.v2005_4 d L tab k r g1 g2 hR hin) hc16) = AccMath.accVec (rowF fl tab (wL L).val (2 * t1.val + 1) (2 * k.val + 1)) (offF fl (wL L).val (2 * t1.val + 1) (2 * k.val + 1)) 1 26 :=
      acc_step d L fl tab (wL L).val (2 * t1.val + 1) (2 * k.val + 1) 1 _ hRB ⟨25, by decide⟩ ⟨1, by decide⟩ _ rfl _ hw_v1991_4 _ (k1_off102_form ..) _ hc16
    have s_B1_26 : addf (AccMath.accVec (rowF fl tab (wL L).val (2 * t1.val + 1) (2 * k.val + 1)) (offF fl (wL L).val (2 * t1.val + 1) (2 * k.val + 1)) 1 26) (shapeCast S16 (pair1_last.sl.v2041_4 d L tab k r g1 g2 hR hin) hc16) = AccMath.accVec (rowF fl tab (wL L).val (2 * t1.val + 1) (2 * k.val + 1)) (offF fl (wL L).val (2 * t1.val + 1) (2 * k.val + 1)) 1 27 :=
      acc_step d L fl tab (wL L).val (2 * t1.val + 1) (2 * k.val + 1) 1 _ hRB ⟨26, by decide⟩ ⟨1, by decide⟩ _ rfl _ hw_v2027_4 _ (k1_off103_form ..) _ hc16
    have s_B1_27 : addf (AccMath.accVec (rowF fl tab (wL L).val (2 * t1.val + 1) (2 * k.val + 1)) (offF fl (wL L).val (2 * t1.val + 1) (2 * k.val + 1)) 1 27) (shapeCast S16 (pair1_last.sl.v2077_4 d L tab k r g1 g2 hR hin) hc16) = AccMath.accVec (rowF fl tab (wL L).val (2 * t1.val + 1) (2 * k.val + 1)) (offF fl (wL L).val (2 * t1.val + 1) (2 * k.val + 1)) 1 28 :=
      acc_step d L fl tab (wL L).val (2 * t1.val + 1) (2 * k.val + 1) 1 _ hRB ⟨27, by decide⟩ ⟨1, by decide⟩ _ rfl _ hw_v2063_4 _ (k1_off104_form ..) _ hc16
    have s_B1_28 : addf (AccMath.accVec (rowF fl tab (wL L).val (2 * t1.val + 1) (2 * k.val + 1)) (offF fl (wL L).val (2 * t1.val + 1) (2 * k.val + 1)) 1 28) (shapeCast S16 (pair1_last.sl.v2113_4 d L tab k r g1 g2 hR hin) hc16) = AccMath.accVec (rowF fl tab (wL L).val (2 * t1.val + 1) (2 * k.val + 1)) (offF fl (wL L).val (2 * t1.val + 1) (2 * k.val + 1)) 1 29 :=
      acc_step d L fl tab (wL L).val (2 * t1.val + 1) (2 * k.val + 1) 1 _ hRB ⟨28, by decide⟩ ⟨1, by decide⟩ _ rfl _ hw_v2099_4 _ (k1_off105_form ..) _ hc16
    have s_B1_29 : addf (AccMath.accVec (rowF fl tab (wL L).val (2 * t1.val + 1) (2 * k.val + 1)) (offF fl (wL L).val (2 * t1.val + 1) (2 * k.val + 1)) 1 29) (shapeCast S16 (pair1_last.sl.v2149_4 d L tab k r g1 g2 hR hin) hc16) = AccMath.accVec (rowF fl tab (wL L).val (2 * t1.val + 1) (2 * k.val + 1)) (offF fl (wL L).val (2 * t1.val + 1) (2 * k.val + 1)) 1 30 :=
      acc_step d L fl tab (wL L).val (2 * t1.val + 1) (2 * k.val + 1) 1 _ hRB ⟨29, by decide⟩ ⟨1, by decide⟩ _ rfl _ hw_v2135_4 _ (k1_off106_form ..) _ hc16
    have s_B1_30 : addf (AccMath.accVec (rowF fl tab (wL L).val (2 * t1.val + 1) (2 * k.val + 1)) (offF fl (wL L).val (2 * t1.val + 1) (2 * k.val + 1)) 1 30) (shapeCast S16 (pair1_last.sl.v2185_4 d L tab k r g1 g2 hR hin) hc16) = AccMath.accVec (rowF fl tab (wL L).val (2 * t1.val + 1) (2 * k.val + 1)) (offF fl (wL L).val (2 * t1.val + 1) (2 * k.val + 1)) 1 31 :=
      acc_step d L fl tab (wL L).val (2 * t1.val + 1) (2 * k.val + 1) 1 _ hRB ⟨30, by decide⟩ ⟨1, by decide⟩ _ rfl _ hw_v2171_4 _ (k1_off107_form ..) _ hc16
    have s_B1_31 : addf (AccMath.accVec (rowF fl tab (wL L).val (2 * t1.val + 1) (2 * k.val + 1)) (offF fl (wL L).val (2 * t1.val + 1) (2 * k.val + 1)) 1 31) (shapeCast S16 (pair1_last.sl.v2221_4 d L tab k r g1 g2 hR hin) hc16) = AccMath.accVec (rowF fl tab (wL L).val (2 * t1.val + 1) (2 * k.val + 1)) (offF fl (wL L).val (2 * t1.val + 1) (2 * k.val + 1)) 1 32 :=
      acc_step d L fl tab (wL L).val (2 * t1.val + 1) (2 * k.val + 1) 1 _ hRB ⟨31, by decide⟩ ⟨1, by decide⟩ _ rfl _ hw_v2207_4 _ (k1_off108_form ..) _ hc16
    have s_B1_32 : addf (AccMath.accVec (rowF fl tab (wL L).val (2 * t1.val + 1) (2 * k.val + 1)) (offF fl (wL L).val (2 * t1.val + 1) (2 * k.val + 1)) 1 32) (shapeCast S16 (pair1_last.sl.v1681_5 d L tab k r g1 g2 hR hin) hc16) = AccMath.accVec (rowF fl tab (wL L).val (2 * t1.val + 1) (2 * k.val + 1)) (offF fl (wL L).val (2 * t1.val + 1) (2 * k.val + 1)) 1 33 :=
      acc_step d L fl tab (wL L).val (2 * t1.val + 1) (2 * k.val + 1) 1 _ hRB ⟨32, by decide⟩ ⟨1, by decide⟩ _ rfl _ hw_v1667_5 _ (k1_off93_form ..) _ hc16
    have s_B1_33 : addf (AccMath.accVec (rowF fl tab (wL L).val (2 * t1.val + 1) (2 * k.val + 1)) (offF fl (wL L).val (2 * t1.val + 1) (2 * k.val + 1)) 1 33) (shapeCast S16 (pair1_last.sl.v1717_5 d L tab k r g1 g2 hR hin) hc16) = AccMath.accVec (rowF fl tab (wL L).val (2 * t1.val + 1) (2 * k.val + 1)) (offF fl (wL L).val (2 * t1.val + 1) (2 * k.val + 1)) 1 34 :=
      acc_step d L fl tab (wL L).val (2 * t1.val + 1) (2 * k.val + 1) 1 _ hRB ⟨33, by decide⟩ ⟨1, by decide⟩ _ rfl _ hw_v1703_5 _ (k1_off94_form ..) _ hc16
    have s_B1_34 : addf (AccMath.accVec (rowF fl tab (wL L).val (2 * t1.val + 1) (2 * k.val + 1)) (offF fl (wL L).val (2 * t1.val + 1) (2 * k.val + 1)) 1 34) (shapeCast S16 (pair1_last.sl.v1753_5 d L tab k r g1 g2 hR hin) hc16) = AccMath.accVec (rowF fl tab (wL L).val (2 * t1.val + 1) (2 * k.val + 1)) (offF fl (wL L).val (2 * t1.val + 1) (2 * k.val + 1)) 1 35 :=
      acc_step d L fl tab (wL L).val (2 * t1.val + 1) (2 * k.val + 1) 1 _ hRB ⟨34, by decide⟩ ⟨1, by decide⟩ _ rfl _ hw_v1739_5 _ (k1_off95_form ..) _ hc16
    have s_B1_35 : addf (AccMath.accVec (rowF fl tab (wL L).val (2 * t1.val + 1) (2 * k.val + 1)) (offF fl (wL L).val (2 * t1.val + 1) (2 * k.val + 1)) 1 35) (shapeCast S16 (pair1_last.sl.v1789_5 d L tab k r g1 g2 hR hin) hc16) = AccMath.accVec (rowF fl tab (wL L).val (2 * t1.val + 1) (2 * k.val + 1)) (offF fl (wL L).val (2 * t1.val + 1) (2 * k.val + 1)) 1 36 :=
      acc_step d L fl tab (wL L).val (2 * t1.val + 1) (2 * k.val + 1) 1 _ hRB ⟨35, by decide⟩ ⟨1, by decide⟩ _ rfl _ hw_v1775_5 _ (k1_off96_form ..) _ hc16
    have s_B1_36 : addf (AccMath.accVec (rowF fl tab (wL L).val (2 * t1.val + 1) (2 * k.val + 1)) (offF fl (wL L).val (2 * t1.val + 1) (2 * k.val + 1)) 1 36) (shapeCast S16 (pair1_last.sl.v1825_5 d L tab k r g1 g2 hR hin) hc16) = AccMath.accVec (rowF fl tab (wL L).val (2 * t1.val + 1) (2 * k.val + 1)) (offF fl (wL L).val (2 * t1.val + 1) (2 * k.val + 1)) 1 37 :=
      acc_step d L fl tab (wL L).val (2 * t1.val + 1) (2 * k.val + 1) 1 _ hRB ⟨36, by decide⟩ ⟨1, by decide⟩ _ rfl _ hw_v1811_5 _ (k1_off97_form ..) _ hc16
    have s_B1_37 : addf (AccMath.accVec (rowF fl tab (wL L).val (2 * t1.val + 1) (2 * k.val + 1)) (offF fl (wL L).val (2 * t1.val + 1) (2 * k.val + 1)) 1 37) (shapeCast S16 (pair1_last.sl.v1861_5 d L tab k r g1 g2 hR hin) hc16) = AccMath.accVec (rowF fl tab (wL L).val (2 * t1.val + 1) (2 * k.val + 1)) (offF fl (wL L).val (2 * t1.val + 1) (2 * k.val + 1)) 1 38 :=
      acc_step d L fl tab (wL L).val (2 * t1.val + 1) (2 * k.val + 1) 1 _ hRB ⟨37, by decide⟩ ⟨1, by decide⟩ _ rfl _ hw_v1847_5 _ (k1_off98_form ..) _ hc16
    have s_B1_38 : addf (AccMath.accVec (rowF fl tab (wL L).val (2 * t1.val + 1) (2 * k.val + 1)) (offF fl (wL L).val (2 * t1.val + 1) (2 * k.val + 1)) 1 38) (shapeCast S16 (pair1_last.sl.v1897_5 d L tab k r g1 g2 hR hin) hc16) = AccMath.accVec (rowF fl tab (wL L).val (2 * t1.val + 1) (2 * k.val + 1)) (offF fl (wL L).val (2 * t1.val + 1) (2 * k.val + 1)) 1 39 :=
      acc_step d L fl tab (wL L).val (2 * t1.val + 1) (2 * k.val + 1) 1 _ hRB ⟨38, by decide⟩ ⟨1, by decide⟩ _ rfl _ hw_v1883_5 _ (k1_off99_form ..) _ hc16
    have s_B1_39 : addf (AccMath.accVec (rowF fl tab (wL L).val (2 * t1.val + 1) (2 * k.val + 1)) (offF fl (wL L).val (2 * t1.val + 1) (2 * k.val + 1)) 1 39) (shapeCast S16 (pair1_last.sl.v1933_5 d L tab k r g1 g2 hR hin) hc16) = AccMath.accVec (rowF fl tab (wL L).val (2 * t1.val + 1) (2 * k.val + 1)) (offF fl (wL L).val (2 * t1.val + 1) (2 * k.val + 1)) 1 40 :=
      acc_step d L fl tab (wL L).val (2 * t1.val + 1) (2 * k.val + 1) 1 _ hRB ⟨39, by decide⟩ ⟨1, by decide⟩ _ rfl _ hw_v1919_5 _ (k1_off100_form ..) _ hc16
    have s_B1_40 : addf (AccMath.accVec (rowF fl tab (wL L).val (2 * t1.val + 1) (2 * k.val + 1)) (offF fl (wL L).val (2 * t1.val + 1) (2 * k.val + 1)) 1 40) (shapeCast S16 (pair1_last.sl.v1969_5 d L tab k r g1 g2 hR hin) hc16) = AccMath.accVec (rowF fl tab (wL L).val (2 * t1.val + 1) (2 * k.val + 1)) (offF fl (wL L).val (2 * t1.val + 1) (2 * k.val + 1)) 1 41 :=
      acc_step d L fl tab (wL L).val (2 * t1.val + 1) (2 * k.val + 1) 1 _ hRB ⟨40, by decide⟩ ⟨1, by decide⟩ _ rfl _ hw_v1955_5 _ (k1_off101_form ..) _ hc16
    have s_B1_41 : addf (AccMath.accVec (rowF fl tab (wL L).val (2 * t1.val + 1) (2 * k.val + 1)) (offF fl (wL L).val (2 * t1.val + 1) (2 * k.val + 1)) 1 41) (shapeCast S16 (pair1_last.sl.v2005_5 d L tab k r g1 g2 hR hin) hc16) = AccMath.accVec (rowF fl tab (wL L).val (2 * t1.val + 1) (2 * k.val + 1)) (offF fl (wL L).val (2 * t1.val + 1) (2 * k.val + 1)) 1 42 :=
      acc_step d L fl tab (wL L).val (2 * t1.val + 1) (2 * k.val + 1) 1 _ hRB ⟨41, by decide⟩ ⟨1, by decide⟩ _ rfl _ hw_v1991_5 _ (k1_off102_form ..) _ hc16
    have s_B1_42 : addf (AccMath.accVec (rowF fl tab (wL L).val (2 * t1.val + 1) (2 * k.val + 1)) (offF fl (wL L).val (2 * t1.val + 1) (2 * k.val + 1)) 1 42) (shapeCast S16 (pair1_last.sl.v2041_5 d L tab k r g1 g2 hR hin) hc16) = AccMath.accVec (rowF fl tab (wL L).val (2 * t1.val + 1) (2 * k.val + 1)) (offF fl (wL L).val (2 * t1.val + 1) (2 * k.val + 1)) 1 43 :=
      acc_step d L fl tab (wL L).val (2 * t1.val + 1) (2 * k.val + 1) 1 _ hRB ⟨42, by decide⟩ ⟨1, by decide⟩ _ rfl _ hw_v2027_5 _ (k1_off103_form ..) _ hc16
    have s_B1_43 : addf (AccMath.accVec (rowF fl tab (wL L).val (2 * t1.val + 1) (2 * k.val + 1)) (offF fl (wL L).val (2 * t1.val + 1) (2 * k.val + 1)) 1 43) (shapeCast S16 (pair1_last.sl.v2077_5 d L tab k r g1 g2 hR hin) hc16) = AccMath.accVec (rowF fl tab (wL L).val (2 * t1.val + 1) (2 * k.val + 1)) (offF fl (wL L).val (2 * t1.val + 1) (2 * k.val + 1)) 1 44 :=
      acc_step d L fl tab (wL L).val (2 * t1.val + 1) (2 * k.val + 1) 1 _ hRB ⟨43, by decide⟩ ⟨1, by decide⟩ _ rfl _ hw_v2063_5 _ (k1_off104_form ..) _ hc16
    have s_B1_44 : addf (AccMath.accVec (rowF fl tab (wL L).val (2 * t1.val + 1) (2 * k.val + 1)) (offF fl (wL L).val (2 * t1.val + 1) (2 * k.val + 1)) 1 44) (shapeCast S16 (pair1_last.sl.v2113_5 d L tab k r g1 g2 hR hin) hc16) = AccMath.accVec (rowF fl tab (wL L).val (2 * t1.val + 1) (2 * k.val + 1)) (offF fl (wL L).val (2 * t1.val + 1) (2 * k.val + 1)) 1 45 :=
      acc_step d L fl tab (wL L).val (2 * t1.val + 1) (2 * k.val + 1) 1 _ hRB ⟨44, by decide⟩ ⟨1, by decide⟩ _ rfl _ hw_v2099_5 _ (k1_off105_form ..) _ hc16
    have s_B1_45 : addf (AccMath.accVec (rowF fl tab (wL L).val (2 * t1.val + 1) (2 * k.val + 1)) (offF fl (wL L).val (2 * t1.val + 1) (2 * k.val + 1)) 1 45) (shapeCast S16 (pair1_last.sl.v2149_5 d L tab k r g1 g2 hR hin) hc16) = AccMath.accVec (rowF fl tab (wL L).val (2 * t1.val + 1) (2 * k.val + 1)) (offF fl (wL L).val (2 * t1.val + 1) (2 * k.val + 1)) 1 46 :=
      acc_step d L fl tab (wL L).val (2 * t1.val + 1) (2 * k.val + 1) 1 _ hRB ⟨45, by decide⟩ ⟨1, by decide⟩ _ rfl _ hw_v2135_5 _ (k1_off106_form ..) _ hc16
    have s_B1_46 : addf (AccMath.accVec (rowF fl tab (wL L).val (2 * t1.val + 1) (2 * k.val + 1)) (offF fl (wL L).val (2 * t1.val + 1) (2 * k.val + 1)) 1 46) (shapeCast S16 (pair1_last.sl.v2185_5 d L tab k r g1 g2 hR hin) hc16) = AccMath.accVec (rowF fl tab (wL L).val (2 * t1.val + 1) (2 * k.val + 1)) (offF fl (wL L).val (2 * t1.val + 1) (2 * k.val + 1)) 1 47 :=
      acc_step d L fl tab (wL L).val (2 * t1.val + 1) (2 * k.val + 1) 1 _ hRB ⟨46, by decide⟩ ⟨1, by decide⟩ _ rfl _ hw_v2171_5 _ (k1_off107_form ..) _ hc16
    have s_B1_47 : addf (AccMath.accVec (rowF fl tab (wL L).val (2 * t1.val + 1) (2 * k.val + 1)) (offF fl (wL L).val (2 * t1.val + 1) (2 * k.val + 1)) 1 47) (shapeCast S16 (pair1_last.sl.v2221_5 d L tab k r g1 g2 hR hin) hc16) = AccMath.accVec (rowF fl tab (wL L).val (2 * t1.val + 1) (2 * k.val + 1)) (offF fl (wL L).val (2 * t1.val + 1) (2 * k.val + 1)) 1 48 :=
      acc_step d L fl tab (wL L).val (2 * t1.val + 1) (2 * k.val + 1) 1 _ hRB ⟨47, by decide⟩ ⟨1, by decide⟩ _ rfl _ hw_v2207_5 _ (k1_off108_form ..) _ hc16
    have s_B1_48 : addf (AccMath.accVec (rowF fl tab (wL L).val (2 * t1.val + 1) (2 * k.val + 1)) (offF fl (wL L).val (2 * t1.val + 1) (2 * k.val + 1)) 1 48) (shapeCast S16 (pair1_last.sl.v1586 d L tab k r g1 g2 hR hin) hc16) = AccMath.accVec (rowF fl tab (wL L).val (2 * t1.val + 1) (2 * k.val + 1)) (offF fl (wL L).val (2 * t1.val + 1) (2 * k.val + 1)) 1 49 :=
      acc_step d L fl tab (wL L).val (2 * t1.val + 1) (2 * k.val + 1) 1 _ hRB ⟨48, by decide⟩ ⟨1, by decide⟩ _ rfl _ hw_v1572 _ (k1_off110_form ..) _ hc16
    have s_B1_49 : addf (AccMath.accVec (rowF fl tab (wL L).val (2 * t1.val + 1) (2 * k.val + 1)) (offF fl (wL L).val (2 * t1.val + 1) (2 * k.val + 1)) 1 49) (shapeCast S16 (pair1_last.sl.v1620 d L tab k r g1 g2 hR hin) hc16) = AccMath.accVec (rowF fl tab (wL L).val (2 * t1.val + 1) (2 * k.val + 1)) (offF fl (wL L).val (2 * t1.val + 1) (2 * k.val + 1)) 1 50 :=
      acc_step d L fl tab (wL L).val (2 * t1.val + 1) (2 * k.val + 1) 1 _ hRB ⟨49, by decide⟩ ⟨1, by decide⟩ _ rfl _ hw_v1606 _ (k1_off111_form ..) _ hc16
    have hP_B1 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val + 1)) (offF fl (wL L).val (2 * t1.val + 1) (2 * k.val + 1)) 1 0) (shapeCast S16 (pair1_last.sl.v1681_3 d L tab k r g1 g2 hR hin) hc16)) (shapeCast S16 (pair1_last.sl.v1717_3 d L tab k r g1 g2 hR hin) hc16)) (shapeCast S16 (pair1_last.sl.v1753_3 d L tab k r g1 g2 hR hin) hc16)) (shapeCast S16 (pair1_last.sl.v1789_3 d L tab k r g1 g2 hR hin) hc16)) (shapeCast S16 (pair1_last.sl.v1825_3 d L tab k r g1 g2 hR hin) hc16)) (shapeCast S16 (pair1_last.sl.v1861_3 d L tab k r g1 g2 hR hin) hc16)) (shapeCast S16 (pair1_last.sl.v1897_3 d L tab k r g1 g2 hR hin) hc16)) (shapeCast S16 (pair1_last.sl.v1933_3 d L tab k r g1 g2 hR hin) hc16)) (shapeCast S16 (pair1_last.sl.v1969_3 d L tab k r g1 g2 hR hin) hc16)) (shapeCast S16 (pair1_last.sl.v2005_3 d L tab k r g1 g2 hR hin) hc16)) (shapeCast S16 (pair1_last.sl.v2041_3 d L tab k r g1 g2 hR hin) hc16)) (shapeCast S16 (pair1_last.sl.v2077_3 d L tab k r g1 g2 hR hin) hc16)) (shapeCast S16 (pair1_last.sl.v2113_3 d L tab k r g1 g2 hR hin) hc16)) (shapeCast S16 (pair1_last.sl.v2149_3 d L tab k r g1 g2 hR hin) hc16)) (shapeCast S16 (pair1_last.sl.v2185_3 d L tab k r g1 g2 hR hin) hc16)) (shapeCast S16 (pair1_last.sl.v2221_3 d L tab k r g1 g2 hR hin) hc16)) (shapeCast S16 (pair1_last.sl.v1681_4 d L tab k r g1 g2 hR hin) hc16)) (shapeCast S16 (pair1_last.sl.v1717_4 d L tab k r g1 g2 hR hin) hc16)) (shapeCast S16 (pair1_last.sl.v1753_4 d L tab k r g1 g2 hR hin) hc16)) (shapeCast S16 (pair1_last.sl.v1789_4 d L tab k r g1 g2 hR hin) hc16)) (shapeCast S16 (pair1_last.sl.v1825_4 d L tab k r g1 g2 hR hin) hc16)) (shapeCast S16 (pair1_last.sl.v1861_4 d L tab k r g1 g2 hR hin) hc16)) (shapeCast S16 (pair1_last.sl.v1897_4 d L tab k r g1 g2 hR hin) hc16)) (shapeCast S16 (pair1_last.sl.v1933_4 d L tab k r g1 g2 hR hin) hc16)) (shapeCast S16 (pair1_last.sl.v1969_4 d L tab k r g1 g2 hR hin) hc16)) (shapeCast S16 (pair1_last.sl.v2005_4 d L tab k r g1 g2 hR hin) hc16)) (shapeCast S16 (pair1_last.sl.v2041_4 d L tab k r g1 g2 hR hin) hc16)) (shapeCast S16 (pair1_last.sl.v2077_4 d L tab k r g1 g2 hR hin) hc16)) (shapeCast S16 (pair1_last.sl.v2113_4 d L tab k r g1 g2 hR hin) hc16)) (shapeCast S16 (pair1_last.sl.v2149_4 d L tab k r g1 g2 hR hin) hc16)) (shapeCast S16 (pair1_last.sl.v2185_4 d L tab k r g1 g2 hR hin) hc16)) (shapeCast S16 (pair1_last.sl.v2221_4 d L tab k r g1 g2 hR hin) hc16)) (shapeCast S16 (pair1_last.sl.v1681_5 d L tab k r g1 g2 hR hin) hc16)) (shapeCast S16 (pair1_last.sl.v1717_5 d L tab k r g1 g2 hR hin) hc16)) (shapeCast S16 (pair1_last.sl.v1753_5 d L tab k r g1 g2 hR hin) hc16)) (shapeCast S16 (pair1_last.sl.v1789_5 d L tab k r g1 g2 hR hin) hc16)) (shapeCast S16 (pair1_last.sl.v1825_5 d L tab k r g1 g2 hR hin) hc16)) (shapeCast S16 (pair1_last.sl.v1861_5 d L tab k r g1 g2 hR hin) hc16)) (shapeCast S16 (pair1_last.sl.v1897_5 d L tab k r g1 g2 hR hin) hc16)) (shapeCast S16 (pair1_last.sl.v1933_5 d L tab k r g1 g2 hR hin) hc16)) (shapeCast S16 (pair1_last.sl.v1969_5 d L tab k r g1 g2 hR hin) hc16)) (shapeCast S16 (pair1_last.sl.v2005_5 d L tab k r g1 g2 hR hin) hc16)) (shapeCast S16 (pair1_last.sl.v2041_5 d L tab k r g1 g2 hR hin) hc16)) (shapeCast S16 (pair1_last.sl.v2077_5 d L tab k r g1 g2 hR hin) hc16)) (shapeCast S16 (pair1_last.sl.v2113_5 d L tab k r g1 g2 hR hin) hc16)) (shapeCast S16 (pair1_last.sl.v2149_5 d L tab k r g1 g2 hR hin) hc16)) (shapeCast S16 (pair1_last.sl.v2185_5 d L tab k r g1 g2 hR hin) hc16)) (shapeCast S16 (pair1_last.sl.v2221_5 d L tab k r g1 g2 hR hin) hc16)) (shapeCast S16 (pair1_last.sl.v1586 d L tab k r g1 g2 hR hin) hc16)) (shapeCast S16 (pair1_last.sl.v1620 d L tab k r g1 g2 hR hin) hc16)) hc1 x = Spec.bagPartial fl tab (128 * (wL L).val + 16 * (2 * t1.val + 1) + (2 * k.val + 1)) (16 * 1 + (x 2).val) 50 := fun x => by
      rw [s_B1_0, s_B1_1, s_B1_2, s_B1_3, s_B1_4, s_B1_5, s_B1_6, s_B1_7, s_B1_8, s_B1_9, s_B1_10, s_B1_11, s_B1_12, s_B1_13, s_B1_14, s_B1_15, s_B1_16, s_B1_17, s_B1_18, s_B1_19, s_B1_20, s_B1_21, s_B1_22, s_B1_23, s_B1_24, s_B1_25, s_B1_26, s_B1_27, s_B1_28, s_B1_29, s_B1_30, s_B1_31, s_B1_32, s_B1_33, s_B1_34, s_B1_35, s_B1_36, s_B1_37, s_B1_38, s_B1_39, s_B1_40, s_B1_41, s_B1_42, s_B1_43, s_B1_44, s_B1_45, s_B1_46, s_B1_47, s_B1_48, s_B1_49]
      exact payload_ok fl tab (wL L).val (2 * t1.val + 1) (2 * k.val + 1) ⟨1, by decide⟩ hc1 x
    have s_B2_0 : addf (AccMath.accVec (rowF fl tab (wL L).val (2 * t1.val + 1) (2 * k.val + 1)) (offF fl (wL L).val (2 * t1.val + 1) (2 * k.val + 1)) 2 0) (shapeCast S16 (pair1_last.sl.v1689_3 d L tab k r g1 g2 hR hin) hc16) = AccMath.accVec (rowF fl tab (wL L).val (2 * t1.val + 1) (2 * k.val + 1)) (offF fl (wL L).val (2 * t1.val + 1) (2 * k.val + 1)) 2 1 :=
      acc_step d L fl tab (wL L).val (2 * t1.val + 1) (2 * k.val + 1) 1 _ hRB ⟨0, by decide⟩ ⟨2, by decide⟩ _ rfl _ hw_v1667_3 _ (k1_off93_form ..) _ hc16
    have s_B2_1 : addf (AccMath.accVec (rowF fl tab (wL L).val (2 * t1.val + 1) (2 * k.val + 1)) (offF fl (wL L).val (2 * t1.val + 1) (2 * k.val + 1)) 2 1) (shapeCast S16 (pair1_last.sl.v1725_3 d L tab k r g1 g2 hR hin) hc16) = AccMath.accVec (rowF fl tab (wL L).val (2 * t1.val + 1) (2 * k.val + 1)) (offF fl (wL L).val (2 * t1.val + 1) (2 * k.val + 1)) 2 2 :=
      acc_step d L fl tab (wL L).val (2 * t1.val + 1) (2 * k.val + 1) 1 _ hRB ⟨1, by decide⟩ ⟨2, by decide⟩ _ rfl _ hw_v1703_3 _ (k1_off94_form ..) _ hc16
    have s_B2_2 : addf (AccMath.accVec (rowF fl tab (wL L).val (2 * t1.val + 1) (2 * k.val + 1)) (offF fl (wL L).val (2 * t1.val + 1) (2 * k.val + 1)) 2 2) (shapeCast S16 (pair1_last.sl.v1761_3 d L tab k r g1 g2 hR hin) hc16) = AccMath.accVec (rowF fl tab (wL L).val (2 * t1.val + 1) (2 * k.val + 1)) (offF fl (wL L).val (2 * t1.val + 1) (2 * k.val + 1)) 2 3 :=
      acc_step d L fl tab (wL L).val (2 * t1.val + 1) (2 * k.val + 1) 1 _ hRB ⟨2, by decide⟩ ⟨2, by decide⟩ _ rfl _ hw_v1739_3 _ (k1_off95_form ..) _ hc16
    have s_B2_3 : addf (AccMath.accVec (rowF fl tab (wL L).val (2 * t1.val + 1) (2 * k.val + 1)) (offF fl (wL L).val (2 * t1.val + 1) (2 * k.val + 1)) 2 3) (shapeCast S16 (pair1_last.sl.v1797_3 d L tab k r g1 g2 hR hin) hc16) = AccMath.accVec (rowF fl tab (wL L).val (2 * t1.val + 1) (2 * k.val + 1)) (offF fl (wL L).val (2 * t1.val + 1) (2 * k.val + 1)) 2 4 :=
      acc_step d L fl tab (wL L).val (2 * t1.val + 1) (2 * k.val + 1) 1 _ hRB ⟨3, by decide⟩ ⟨2, by decide⟩ _ rfl _ hw_v1775_3 _ (k1_off96_form ..) _ hc16
    have s_B2_4 : addf (AccMath.accVec (rowF fl tab (wL L).val (2 * t1.val + 1) (2 * k.val + 1)) (offF fl (wL L).val (2 * t1.val + 1) (2 * k.val + 1)) 2 4) (shapeCast S16 (pair1_last.sl.v1833_3 d L tab k r g1 g2 hR hin) hc16) = AccMath.accVec (rowF fl tab (wL L).val (2 * t1.val + 1) (2 * k.val + 1)) (offF fl (wL L).val (2 * t1.val + 1) (2 * k.val + 1)) 2 5 :=
      acc_step d L fl tab (wL L).val (2 * t1.val + 1) (2 * k.val + 1) 1 _ hRB ⟨4, by decide⟩ ⟨2, by decide⟩ _ rfl _ hw_v1811_3 _ (k1_off97_form ..) _ hc16
    have s_B2_5 : addf (AccMath.accVec (rowF fl tab (wL L).val (2 * t1.val + 1) (2 * k.val + 1)) (offF fl (wL L).val (2 * t1.val + 1) (2 * k.val + 1)) 2 5) (shapeCast S16 (pair1_last.sl.v1869_3 d L tab k r g1 g2 hR hin) hc16) = AccMath.accVec (rowF fl tab (wL L).val (2 * t1.val + 1) (2 * k.val + 1)) (offF fl (wL L).val (2 * t1.val + 1) (2 * k.val + 1)) 2 6 :=
      acc_step d L fl tab (wL L).val (2 * t1.val + 1) (2 * k.val + 1) 1 _ hRB ⟨5, by decide⟩ ⟨2, by decide⟩ _ rfl _ hw_v1847_3 _ (k1_off98_form ..) _ hc16
    have s_B2_6 : addf (AccMath.accVec (rowF fl tab (wL L).val (2 * t1.val + 1) (2 * k.val + 1)) (offF fl (wL L).val (2 * t1.val + 1) (2 * k.val + 1)) 2 6) (shapeCast S16 (pair1_last.sl.v1905_3 d L tab k r g1 g2 hR hin) hc16) = AccMath.accVec (rowF fl tab (wL L).val (2 * t1.val + 1) (2 * k.val + 1)) (offF fl (wL L).val (2 * t1.val + 1) (2 * k.val + 1)) 2 7 :=
      acc_step d L fl tab (wL L).val (2 * t1.val + 1) (2 * k.val + 1) 1 _ hRB ⟨6, by decide⟩ ⟨2, by decide⟩ _ rfl _ hw_v1883_3 _ (k1_off99_form ..) _ hc16
    have s_B2_7 : addf (AccMath.accVec (rowF fl tab (wL L).val (2 * t1.val + 1) (2 * k.val + 1)) (offF fl (wL L).val (2 * t1.val + 1) (2 * k.val + 1)) 2 7) (shapeCast S16 (pair1_last.sl.v1941_3 d L tab k r g1 g2 hR hin) hc16) = AccMath.accVec (rowF fl tab (wL L).val (2 * t1.val + 1) (2 * k.val + 1)) (offF fl (wL L).val (2 * t1.val + 1) (2 * k.val + 1)) 2 8 :=
      acc_step d L fl tab (wL L).val (2 * t1.val + 1) (2 * k.val + 1) 1 _ hRB ⟨7, by decide⟩ ⟨2, by decide⟩ _ rfl _ hw_v1919_3 _ (k1_off100_form ..) _ hc16
    have s_B2_8 : addf (AccMath.accVec (rowF fl tab (wL L).val (2 * t1.val + 1) (2 * k.val + 1)) (offF fl (wL L).val (2 * t1.val + 1) (2 * k.val + 1)) 2 8) (shapeCast S16 (pair1_last.sl.v1977_3 d L tab k r g1 g2 hR hin) hc16) = AccMath.accVec (rowF fl tab (wL L).val (2 * t1.val + 1) (2 * k.val + 1)) (offF fl (wL L).val (2 * t1.val + 1) (2 * k.val + 1)) 2 9 :=
      acc_step d L fl tab (wL L).val (2 * t1.val + 1) (2 * k.val + 1) 1 _ hRB ⟨8, by decide⟩ ⟨2, by decide⟩ _ rfl _ hw_v1955_3 _ (k1_off101_form ..) _ hc16
    have s_B2_9 : addf (AccMath.accVec (rowF fl tab (wL L).val (2 * t1.val + 1) (2 * k.val + 1)) (offF fl (wL L).val (2 * t1.val + 1) (2 * k.val + 1)) 2 9) (shapeCast S16 (pair1_last.sl.v2013_3 d L tab k r g1 g2 hR hin) hc16) = AccMath.accVec (rowF fl tab (wL L).val (2 * t1.val + 1) (2 * k.val + 1)) (offF fl (wL L).val (2 * t1.val + 1) (2 * k.val + 1)) 2 10 :=
      acc_step d L fl tab (wL L).val (2 * t1.val + 1) (2 * k.val + 1) 1 _ hRB ⟨9, by decide⟩ ⟨2, by decide⟩ _ rfl _ hw_v1991_3 _ (k1_off102_form ..) _ hc16
    have s_B2_10 : addf (AccMath.accVec (rowF fl tab (wL L).val (2 * t1.val + 1) (2 * k.val + 1)) (offF fl (wL L).val (2 * t1.val + 1) (2 * k.val + 1)) 2 10) (shapeCast S16 (pair1_last.sl.v2049_3 d L tab k r g1 g2 hR hin) hc16) = AccMath.accVec (rowF fl tab (wL L).val (2 * t1.val + 1) (2 * k.val + 1)) (offF fl (wL L).val (2 * t1.val + 1) (2 * k.val + 1)) 2 11 :=
      acc_step d L fl tab (wL L).val (2 * t1.val + 1) (2 * k.val + 1) 1 _ hRB ⟨10, by decide⟩ ⟨2, by decide⟩ _ rfl _ hw_v2027_3 _ (k1_off103_form ..) _ hc16
    have s_B2_11 : addf (AccMath.accVec (rowF fl tab (wL L).val (2 * t1.val + 1) (2 * k.val + 1)) (offF fl (wL L).val (2 * t1.val + 1) (2 * k.val + 1)) 2 11) (shapeCast S16 (pair1_last.sl.v2085_3 d L tab k r g1 g2 hR hin) hc16) = AccMath.accVec (rowF fl tab (wL L).val (2 * t1.val + 1) (2 * k.val + 1)) (offF fl (wL L).val (2 * t1.val + 1) (2 * k.val + 1)) 2 12 :=
      acc_step d L fl tab (wL L).val (2 * t1.val + 1) (2 * k.val + 1) 1 _ hRB ⟨11, by decide⟩ ⟨2, by decide⟩ _ rfl _ hw_v2063_3 _ (k1_off104_form ..) _ hc16
    have s_B2_12 : addf (AccMath.accVec (rowF fl tab (wL L).val (2 * t1.val + 1) (2 * k.val + 1)) (offF fl (wL L).val (2 * t1.val + 1) (2 * k.val + 1)) 2 12) (shapeCast S16 (pair1_last.sl.v2121_3 d L tab k r g1 g2 hR hin) hc16) = AccMath.accVec (rowF fl tab (wL L).val (2 * t1.val + 1) (2 * k.val + 1)) (offF fl (wL L).val (2 * t1.val + 1) (2 * k.val + 1)) 2 13 :=
      acc_step d L fl tab (wL L).val (2 * t1.val + 1) (2 * k.val + 1) 1 _ hRB ⟨12, by decide⟩ ⟨2, by decide⟩ _ rfl _ hw_v2099_3 _ (k1_off105_form ..) _ hc16
    have s_B2_13 : addf (AccMath.accVec (rowF fl tab (wL L).val (2 * t1.val + 1) (2 * k.val + 1)) (offF fl (wL L).val (2 * t1.val + 1) (2 * k.val + 1)) 2 13) (shapeCast S16 (pair1_last.sl.v2157_3 d L tab k r g1 g2 hR hin) hc16) = AccMath.accVec (rowF fl tab (wL L).val (2 * t1.val + 1) (2 * k.val + 1)) (offF fl (wL L).val (2 * t1.val + 1) (2 * k.val + 1)) 2 14 :=
      acc_step d L fl tab (wL L).val (2 * t1.val + 1) (2 * k.val + 1) 1 _ hRB ⟨13, by decide⟩ ⟨2, by decide⟩ _ rfl _ hw_v2135_3 _ (k1_off106_form ..) _ hc16
    have s_B2_14 : addf (AccMath.accVec (rowF fl tab (wL L).val (2 * t1.val + 1) (2 * k.val + 1)) (offF fl (wL L).val (2 * t1.val + 1) (2 * k.val + 1)) 2 14) (shapeCast S16 (pair1_last.sl.v2193_3 d L tab k r g1 g2 hR hin) hc16) = AccMath.accVec (rowF fl tab (wL L).val (2 * t1.val + 1) (2 * k.val + 1)) (offF fl (wL L).val (2 * t1.val + 1) (2 * k.val + 1)) 2 15 :=
      acc_step d L fl tab (wL L).val (2 * t1.val + 1) (2 * k.val + 1) 1 _ hRB ⟨14, by decide⟩ ⟨2, by decide⟩ _ rfl _ hw_v2171_3 _ (k1_off107_form ..) _ hc16
    have s_B2_15 : addf (AccMath.accVec (rowF fl tab (wL L).val (2 * t1.val + 1) (2 * k.val + 1)) (offF fl (wL L).val (2 * t1.val + 1) (2 * k.val + 1)) 2 15) (shapeCast S16 (pair1_last.sl.v2229_3 d L tab k r g1 g2 hR hin) hc16) = AccMath.accVec (rowF fl tab (wL L).val (2 * t1.val + 1) (2 * k.val + 1)) (offF fl (wL L).val (2 * t1.val + 1) (2 * k.val + 1)) 2 16 :=
      acc_step d L fl tab (wL L).val (2 * t1.val + 1) (2 * k.val + 1) 1 _ hRB ⟨15, by decide⟩ ⟨2, by decide⟩ _ rfl _ hw_v2207_3 _ (k1_off108_form ..) _ hc16
    have s_B2_16 : addf (AccMath.accVec (rowF fl tab (wL L).val (2 * t1.val + 1) (2 * k.val + 1)) (offF fl (wL L).val (2 * t1.val + 1) (2 * k.val + 1)) 2 16) (shapeCast S16 (pair1_last.sl.v1689_4 d L tab k r g1 g2 hR hin) hc16) = AccMath.accVec (rowF fl tab (wL L).val (2 * t1.val + 1) (2 * k.val + 1)) (offF fl (wL L).val (2 * t1.val + 1) (2 * k.val + 1)) 2 17 :=
      acc_step d L fl tab (wL L).val (2 * t1.val + 1) (2 * k.val + 1) 1 _ hRB ⟨16, by decide⟩ ⟨2, by decide⟩ _ rfl _ hw_v1667_4 _ (k1_off93_form ..) _ hc16
    have s_B2_17 : addf (AccMath.accVec (rowF fl tab (wL L).val (2 * t1.val + 1) (2 * k.val + 1)) (offF fl (wL L).val (2 * t1.val + 1) (2 * k.val + 1)) 2 17) (shapeCast S16 (pair1_last.sl.v1725_4 d L tab k r g1 g2 hR hin) hc16) = AccMath.accVec (rowF fl tab (wL L).val (2 * t1.val + 1) (2 * k.val + 1)) (offF fl (wL L).val (2 * t1.val + 1) (2 * k.val + 1)) 2 18 :=
      acc_step d L fl tab (wL L).val (2 * t1.val + 1) (2 * k.val + 1) 1 _ hRB ⟨17, by decide⟩ ⟨2, by decide⟩ _ rfl _ hw_v1703_4 _ (k1_off94_form ..) _ hc16
    have s_B2_18 : addf (AccMath.accVec (rowF fl tab (wL L).val (2 * t1.val + 1) (2 * k.val + 1)) (offF fl (wL L).val (2 * t1.val + 1) (2 * k.val + 1)) 2 18) (shapeCast S16 (pair1_last.sl.v1761_4 d L tab k r g1 g2 hR hin) hc16) = AccMath.accVec (rowF fl tab (wL L).val (2 * t1.val + 1) (2 * k.val + 1)) (offF fl (wL L).val (2 * t1.val + 1) (2 * k.val + 1)) 2 19 :=
      acc_step d L fl tab (wL L).val (2 * t1.val + 1) (2 * k.val + 1) 1 _ hRB ⟨18, by decide⟩ ⟨2, by decide⟩ _ rfl _ hw_v1739_4 _ (k1_off95_form ..) _ hc16
    have s_B2_19 : addf (AccMath.accVec (rowF fl tab (wL L).val (2 * t1.val + 1) (2 * k.val + 1)) (offF fl (wL L).val (2 * t1.val + 1) (2 * k.val + 1)) 2 19) (shapeCast S16 (pair1_last.sl.v1797_4 d L tab k r g1 g2 hR hin) hc16) = AccMath.accVec (rowF fl tab (wL L).val (2 * t1.val + 1) (2 * k.val + 1)) (offF fl (wL L).val (2 * t1.val + 1) (2 * k.val + 1)) 2 20 :=
      acc_step d L fl tab (wL L).val (2 * t1.val + 1) (2 * k.val + 1) 1 _ hRB ⟨19, by decide⟩ ⟨2, by decide⟩ _ rfl _ hw_v1775_4 _ (k1_off96_form ..) _ hc16
    have s_B2_20 : addf (AccMath.accVec (rowF fl tab (wL L).val (2 * t1.val + 1) (2 * k.val + 1)) (offF fl (wL L).val (2 * t1.val + 1) (2 * k.val + 1)) 2 20) (shapeCast S16 (pair1_last.sl.v1833_4 d L tab k r g1 g2 hR hin) hc16) = AccMath.accVec (rowF fl tab (wL L).val (2 * t1.val + 1) (2 * k.val + 1)) (offF fl (wL L).val (2 * t1.val + 1) (2 * k.val + 1)) 2 21 :=
      acc_step d L fl tab (wL L).val (2 * t1.val + 1) (2 * k.val + 1) 1 _ hRB ⟨20, by decide⟩ ⟨2, by decide⟩ _ rfl _ hw_v1811_4 _ (k1_off97_form ..) _ hc16
    have s_B2_21 : addf (AccMath.accVec (rowF fl tab (wL L).val (2 * t1.val + 1) (2 * k.val + 1)) (offF fl (wL L).val (2 * t1.val + 1) (2 * k.val + 1)) 2 21) (shapeCast S16 (pair1_last.sl.v1869_4 d L tab k r g1 g2 hR hin) hc16) = AccMath.accVec (rowF fl tab (wL L).val (2 * t1.val + 1) (2 * k.val + 1)) (offF fl (wL L).val (2 * t1.val + 1) (2 * k.val + 1)) 2 22 :=
      acc_step d L fl tab (wL L).val (2 * t1.val + 1) (2 * k.val + 1) 1 _ hRB ⟨21, by decide⟩ ⟨2, by decide⟩ _ rfl _ hw_v1847_4 _ (k1_off98_form ..) _ hc16
    have s_B2_22 : addf (AccMath.accVec (rowF fl tab (wL L).val (2 * t1.val + 1) (2 * k.val + 1)) (offF fl (wL L).val (2 * t1.val + 1) (2 * k.val + 1)) 2 22) (shapeCast S16 (pair1_last.sl.v1905_4 d L tab k r g1 g2 hR hin) hc16) = AccMath.accVec (rowF fl tab (wL L).val (2 * t1.val + 1) (2 * k.val + 1)) (offF fl (wL L).val (2 * t1.val + 1) (2 * k.val + 1)) 2 23 :=
      acc_step d L fl tab (wL L).val (2 * t1.val + 1) (2 * k.val + 1) 1 _ hRB ⟨22, by decide⟩ ⟨2, by decide⟩ _ rfl _ hw_v1883_4 _ (k1_off99_form ..) _ hc16
    have s_B2_23 : addf (AccMath.accVec (rowF fl tab (wL L).val (2 * t1.val + 1) (2 * k.val + 1)) (offF fl (wL L).val (2 * t1.val + 1) (2 * k.val + 1)) 2 23) (shapeCast S16 (pair1_last.sl.v1941_4 d L tab k r g1 g2 hR hin) hc16) = AccMath.accVec (rowF fl tab (wL L).val (2 * t1.val + 1) (2 * k.val + 1)) (offF fl (wL L).val (2 * t1.val + 1) (2 * k.val + 1)) 2 24 :=
      acc_step d L fl tab (wL L).val (2 * t1.val + 1) (2 * k.val + 1) 1 _ hRB ⟨23, by decide⟩ ⟨2, by decide⟩ _ rfl _ hw_v1919_4 _ (k1_off100_form ..) _ hc16
    have s_B2_24 : addf (AccMath.accVec (rowF fl tab (wL L).val (2 * t1.val + 1) (2 * k.val + 1)) (offF fl (wL L).val (2 * t1.val + 1) (2 * k.val + 1)) 2 24) (shapeCast S16 (pair1_last.sl.v1977_4 d L tab k r g1 g2 hR hin) hc16) = AccMath.accVec (rowF fl tab (wL L).val (2 * t1.val + 1) (2 * k.val + 1)) (offF fl (wL L).val (2 * t1.val + 1) (2 * k.val + 1)) 2 25 :=
      acc_step d L fl tab (wL L).val (2 * t1.val + 1) (2 * k.val + 1) 1 _ hRB ⟨24, by decide⟩ ⟨2, by decide⟩ _ rfl _ hw_v1955_4 _ (k1_off101_form ..) _ hc16
    have s_B2_25 : addf (AccMath.accVec (rowF fl tab (wL L).val (2 * t1.val + 1) (2 * k.val + 1)) (offF fl (wL L).val (2 * t1.val + 1) (2 * k.val + 1)) 2 25) (shapeCast S16 (pair1_last.sl.v2013_4 d L tab k r g1 g2 hR hin) hc16) = AccMath.accVec (rowF fl tab (wL L).val (2 * t1.val + 1) (2 * k.val + 1)) (offF fl (wL L).val (2 * t1.val + 1) (2 * k.val + 1)) 2 26 :=
      acc_step d L fl tab (wL L).val (2 * t1.val + 1) (2 * k.val + 1) 1 _ hRB ⟨25, by decide⟩ ⟨2, by decide⟩ _ rfl _ hw_v1991_4 _ (k1_off102_form ..) _ hc16
    have s_B2_26 : addf (AccMath.accVec (rowF fl tab (wL L).val (2 * t1.val + 1) (2 * k.val + 1)) (offF fl (wL L).val (2 * t1.val + 1) (2 * k.val + 1)) 2 26) (shapeCast S16 (pair1_last.sl.v2049_4 d L tab k r g1 g2 hR hin) hc16) = AccMath.accVec (rowF fl tab (wL L).val (2 * t1.val + 1) (2 * k.val + 1)) (offF fl (wL L).val (2 * t1.val + 1) (2 * k.val + 1)) 2 27 :=
      acc_step d L fl tab (wL L).val (2 * t1.val + 1) (2 * k.val + 1) 1 _ hRB ⟨26, by decide⟩ ⟨2, by decide⟩ _ rfl _ hw_v2027_4 _ (k1_off103_form ..) _ hc16
    have s_B2_27 : addf (AccMath.accVec (rowF fl tab (wL L).val (2 * t1.val + 1) (2 * k.val + 1)) (offF fl (wL L).val (2 * t1.val + 1) (2 * k.val + 1)) 2 27) (shapeCast S16 (pair1_last.sl.v2085_4 d L tab k r g1 g2 hR hin) hc16) = AccMath.accVec (rowF fl tab (wL L).val (2 * t1.val + 1) (2 * k.val + 1)) (offF fl (wL L).val (2 * t1.val + 1) (2 * k.val + 1)) 2 28 :=
      acc_step d L fl tab (wL L).val (2 * t1.val + 1) (2 * k.val + 1) 1 _ hRB ⟨27, by decide⟩ ⟨2, by decide⟩ _ rfl _ hw_v2063_4 _ (k1_off104_form ..) _ hc16
    have s_B2_28 : addf (AccMath.accVec (rowF fl tab (wL L).val (2 * t1.val + 1) (2 * k.val + 1)) (offF fl (wL L).val (2 * t1.val + 1) (2 * k.val + 1)) 2 28) (shapeCast S16 (pair1_last.sl.v2121_4 d L tab k r g1 g2 hR hin) hc16) = AccMath.accVec (rowF fl tab (wL L).val (2 * t1.val + 1) (2 * k.val + 1)) (offF fl (wL L).val (2 * t1.val + 1) (2 * k.val + 1)) 2 29 :=
      acc_step d L fl tab (wL L).val (2 * t1.val + 1) (2 * k.val + 1) 1 _ hRB ⟨28, by decide⟩ ⟨2, by decide⟩ _ rfl _ hw_v2099_4 _ (k1_off105_form ..) _ hc16
    have s_B2_29 : addf (AccMath.accVec (rowF fl tab (wL L).val (2 * t1.val + 1) (2 * k.val + 1)) (offF fl (wL L).val (2 * t1.val + 1) (2 * k.val + 1)) 2 29) (shapeCast S16 (pair1_last.sl.v2157_4 d L tab k r g1 g2 hR hin) hc16) = AccMath.accVec (rowF fl tab (wL L).val (2 * t1.val + 1) (2 * k.val + 1)) (offF fl (wL L).val (2 * t1.val + 1) (2 * k.val + 1)) 2 30 :=
      acc_step d L fl tab (wL L).val (2 * t1.val + 1) (2 * k.val + 1) 1 _ hRB ⟨29, by decide⟩ ⟨2, by decide⟩ _ rfl _ hw_v2135_4 _ (k1_off106_form ..) _ hc16
    have s_B2_30 : addf (AccMath.accVec (rowF fl tab (wL L).val (2 * t1.val + 1) (2 * k.val + 1)) (offF fl (wL L).val (2 * t1.val + 1) (2 * k.val + 1)) 2 30) (shapeCast S16 (pair1_last.sl.v2193_4 d L tab k r g1 g2 hR hin) hc16) = AccMath.accVec (rowF fl tab (wL L).val (2 * t1.val + 1) (2 * k.val + 1)) (offF fl (wL L).val (2 * t1.val + 1) (2 * k.val + 1)) 2 31 :=
      acc_step d L fl tab (wL L).val (2 * t1.val + 1) (2 * k.val + 1) 1 _ hRB ⟨30, by decide⟩ ⟨2, by decide⟩ _ rfl _ hw_v2171_4 _ (k1_off107_form ..) _ hc16
    have s_B2_31 : addf (AccMath.accVec (rowF fl tab (wL L).val (2 * t1.val + 1) (2 * k.val + 1)) (offF fl (wL L).val (2 * t1.val + 1) (2 * k.val + 1)) 2 31) (shapeCast S16 (pair1_last.sl.v2229_4 d L tab k r g1 g2 hR hin) hc16) = AccMath.accVec (rowF fl tab (wL L).val (2 * t1.val + 1) (2 * k.val + 1)) (offF fl (wL L).val (2 * t1.val + 1) (2 * k.val + 1)) 2 32 :=
      acc_step d L fl tab (wL L).val (2 * t1.val + 1) (2 * k.val + 1) 1 _ hRB ⟨31, by decide⟩ ⟨2, by decide⟩ _ rfl _ hw_v2207_4 _ (k1_off108_form ..) _ hc16
    have s_B2_32 : addf (AccMath.accVec (rowF fl tab (wL L).val (2 * t1.val + 1) (2 * k.val + 1)) (offF fl (wL L).val (2 * t1.val + 1) (2 * k.val + 1)) 2 32) (shapeCast S16 (pair1_last.sl.v1689_5 d L tab k r g1 g2 hR hin) hc16) = AccMath.accVec (rowF fl tab (wL L).val (2 * t1.val + 1) (2 * k.val + 1)) (offF fl (wL L).val (2 * t1.val + 1) (2 * k.val + 1)) 2 33 :=
      acc_step d L fl tab (wL L).val (2 * t1.val + 1) (2 * k.val + 1) 1 _ hRB ⟨32, by decide⟩ ⟨2, by decide⟩ _ rfl _ hw_v1667_5 _ (k1_off93_form ..) _ hc16
    have s_B2_33 : addf (AccMath.accVec (rowF fl tab (wL L).val (2 * t1.val + 1) (2 * k.val + 1)) (offF fl (wL L).val (2 * t1.val + 1) (2 * k.val + 1)) 2 33) (shapeCast S16 (pair1_last.sl.v1725_5 d L tab k r g1 g2 hR hin) hc16) = AccMath.accVec (rowF fl tab (wL L).val (2 * t1.val + 1) (2 * k.val + 1)) (offF fl (wL L).val (2 * t1.val + 1) (2 * k.val + 1)) 2 34 :=
      acc_step d L fl tab (wL L).val (2 * t1.val + 1) (2 * k.val + 1) 1 _ hRB ⟨33, by decide⟩ ⟨2, by decide⟩ _ rfl _ hw_v1703_5 _ (k1_off94_form ..) _ hc16
    have s_B2_34 : addf (AccMath.accVec (rowF fl tab (wL L).val (2 * t1.val + 1) (2 * k.val + 1)) (offF fl (wL L).val (2 * t1.val + 1) (2 * k.val + 1)) 2 34) (shapeCast S16 (pair1_last.sl.v1761_5 d L tab k r g1 g2 hR hin) hc16) = AccMath.accVec (rowF fl tab (wL L).val (2 * t1.val + 1) (2 * k.val + 1)) (offF fl (wL L).val (2 * t1.val + 1) (2 * k.val + 1)) 2 35 :=
      acc_step d L fl tab (wL L).val (2 * t1.val + 1) (2 * k.val + 1) 1 _ hRB ⟨34, by decide⟩ ⟨2, by decide⟩ _ rfl _ hw_v1739_5 _ (k1_off95_form ..) _ hc16
    have s_B2_35 : addf (AccMath.accVec (rowF fl tab (wL L).val (2 * t1.val + 1) (2 * k.val + 1)) (offF fl (wL L).val (2 * t1.val + 1) (2 * k.val + 1)) 2 35) (shapeCast S16 (pair1_last.sl.v1797_5 d L tab k r g1 g2 hR hin) hc16) = AccMath.accVec (rowF fl tab (wL L).val (2 * t1.val + 1) (2 * k.val + 1)) (offF fl (wL L).val (2 * t1.val + 1) (2 * k.val + 1)) 2 36 :=
      acc_step d L fl tab (wL L).val (2 * t1.val + 1) (2 * k.val + 1) 1 _ hRB ⟨35, by decide⟩ ⟨2, by decide⟩ _ rfl _ hw_v1775_5 _ (k1_off96_form ..) _ hc16
    have s_B2_36 : addf (AccMath.accVec (rowF fl tab (wL L).val (2 * t1.val + 1) (2 * k.val + 1)) (offF fl (wL L).val (2 * t1.val + 1) (2 * k.val + 1)) 2 36) (shapeCast S16 (pair1_last.sl.v1833_5 d L tab k r g1 g2 hR hin) hc16) = AccMath.accVec (rowF fl tab (wL L).val (2 * t1.val + 1) (2 * k.val + 1)) (offF fl (wL L).val (2 * t1.val + 1) (2 * k.val + 1)) 2 37 :=
      acc_step d L fl tab (wL L).val (2 * t1.val + 1) (2 * k.val + 1) 1 _ hRB ⟨36, by decide⟩ ⟨2, by decide⟩ _ rfl _ hw_v1811_5 _ (k1_off97_form ..) _ hc16
    have s_B2_37 : addf (AccMath.accVec (rowF fl tab (wL L).val (2 * t1.val + 1) (2 * k.val + 1)) (offF fl (wL L).val (2 * t1.val + 1) (2 * k.val + 1)) 2 37) (shapeCast S16 (pair1_last.sl.v1869_5 d L tab k r g1 g2 hR hin) hc16) = AccMath.accVec (rowF fl tab (wL L).val (2 * t1.val + 1) (2 * k.val + 1)) (offF fl (wL L).val (2 * t1.val + 1) (2 * k.val + 1)) 2 38 :=
      acc_step d L fl tab (wL L).val (2 * t1.val + 1) (2 * k.val + 1) 1 _ hRB ⟨37, by decide⟩ ⟨2, by decide⟩ _ rfl _ hw_v1847_5 _ (k1_off98_form ..) _ hc16
    have s_B2_38 : addf (AccMath.accVec (rowF fl tab (wL L).val (2 * t1.val + 1) (2 * k.val + 1)) (offF fl (wL L).val (2 * t1.val + 1) (2 * k.val + 1)) 2 38) (shapeCast S16 (pair1_last.sl.v1905_5 d L tab k r g1 g2 hR hin) hc16) = AccMath.accVec (rowF fl tab (wL L).val (2 * t1.val + 1) (2 * k.val + 1)) (offF fl (wL L).val (2 * t1.val + 1) (2 * k.val + 1)) 2 39 :=
      acc_step d L fl tab (wL L).val (2 * t1.val + 1) (2 * k.val + 1) 1 _ hRB ⟨38, by decide⟩ ⟨2, by decide⟩ _ rfl _ hw_v1883_5 _ (k1_off99_form ..) _ hc16
    have s_B2_39 : addf (AccMath.accVec (rowF fl tab (wL L).val (2 * t1.val + 1) (2 * k.val + 1)) (offF fl (wL L).val (2 * t1.val + 1) (2 * k.val + 1)) 2 39) (shapeCast S16 (pair1_last.sl.v1941_5 d L tab k r g1 g2 hR hin) hc16) = AccMath.accVec (rowF fl tab (wL L).val (2 * t1.val + 1) (2 * k.val + 1)) (offF fl (wL L).val (2 * t1.val + 1) (2 * k.val + 1)) 2 40 :=
      acc_step d L fl tab (wL L).val (2 * t1.val + 1) (2 * k.val + 1) 1 _ hRB ⟨39, by decide⟩ ⟨2, by decide⟩ _ rfl _ hw_v1919_5 _ (k1_off100_form ..) _ hc16
    have s_B2_40 : addf (AccMath.accVec (rowF fl tab (wL L).val (2 * t1.val + 1) (2 * k.val + 1)) (offF fl (wL L).val (2 * t1.val + 1) (2 * k.val + 1)) 2 40) (shapeCast S16 (pair1_last.sl.v1977_5 d L tab k r g1 g2 hR hin) hc16) = AccMath.accVec (rowF fl tab (wL L).val (2 * t1.val + 1) (2 * k.val + 1)) (offF fl (wL L).val (2 * t1.val + 1) (2 * k.val + 1)) 2 41 :=
      acc_step d L fl tab (wL L).val (2 * t1.val + 1) (2 * k.val + 1) 1 _ hRB ⟨40, by decide⟩ ⟨2, by decide⟩ _ rfl _ hw_v1955_5 _ (k1_off101_form ..) _ hc16
    have s_B2_41 : addf (AccMath.accVec (rowF fl tab (wL L).val (2 * t1.val + 1) (2 * k.val + 1)) (offF fl (wL L).val (2 * t1.val + 1) (2 * k.val + 1)) 2 41) (shapeCast S16 (pair1_last.sl.v2013_5 d L tab k r g1 g2 hR hin) hc16) = AccMath.accVec (rowF fl tab (wL L).val (2 * t1.val + 1) (2 * k.val + 1)) (offF fl (wL L).val (2 * t1.val + 1) (2 * k.val + 1)) 2 42 :=
      acc_step d L fl tab (wL L).val (2 * t1.val + 1) (2 * k.val + 1) 1 _ hRB ⟨41, by decide⟩ ⟨2, by decide⟩ _ rfl _ hw_v1991_5 _ (k1_off102_form ..) _ hc16
    have s_B2_42 : addf (AccMath.accVec (rowF fl tab (wL L).val (2 * t1.val + 1) (2 * k.val + 1)) (offF fl (wL L).val (2 * t1.val + 1) (2 * k.val + 1)) 2 42) (shapeCast S16 (pair1_last.sl.v2049_5 d L tab k r g1 g2 hR hin) hc16) = AccMath.accVec (rowF fl tab (wL L).val (2 * t1.val + 1) (2 * k.val + 1)) (offF fl (wL L).val (2 * t1.val + 1) (2 * k.val + 1)) 2 43 :=
      acc_step d L fl tab (wL L).val (2 * t1.val + 1) (2 * k.val + 1) 1 _ hRB ⟨42, by decide⟩ ⟨2, by decide⟩ _ rfl _ hw_v2027_5 _ (k1_off103_form ..) _ hc16
    have s_B2_43 : addf (AccMath.accVec (rowF fl tab (wL L).val (2 * t1.val + 1) (2 * k.val + 1)) (offF fl (wL L).val (2 * t1.val + 1) (2 * k.val + 1)) 2 43) (shapeCast S16 (pair1_last.sl.v2085_5 d L tab k r g1 g2 hR hin) hc16) = AccMath.accVec (rowF fl tab (wL L).val (2 * t1.val + 1) (2 * k.val + 1)) (offF fl (wL L).val (2 * t1.val + 1) (2 * k.val + 1)) 2 44 :=
      acc_step d L fl tab (wL L).val (2 * t1.val + 1) (2 * k.val + 1) 1 _ hRB ⟨43, by decide⟩ ⟨2, by decide⟩ _ rfl _ hw_v2063_5 _ (k1_off104_form ..) _ hc16
    have s_B2_44 : addf (AccMath.accVec (rowF fl tab (wL L).val (2 * t1.val + 1) (2 * k.val + 1)) (offF fl (wL L).val (2 * t1.val + 1) (2 * k.val + 1)) 2 44) (shapeCast S16 (pair1_last.sl.v2121_5 d L tab k r g1 g2 hR hin) hc16) = AccMath.accVec (rowF fl tab (wL L).val (2 * t1.val + 1) (2 * k.val + 1)) (offF fl (wL L).val (2 * t1.val + 1) (2 * k.val + 1)) 2 45 :=
      acc_step d L fl tab (wL L).val (2 * t1.val + 1) (2 * k.val + 1) 1 _ hRB ⟨44, by decide⟩ ⟨2, by decide⟩ _ rfl _ hw_v2099_5 _ (k1_off105_form ..) _ hc16
    have s_B2_45 : addf (AccMath.accVec (rowF fl tab (wL L).val (2 * t1.val + 1) (2 * k.val + 1)) (offF fl (wL L).val (2 * t1.val + 1) (2 * k.val + 1)) 2 45) (shapeCast S16 (pair1_last.sl.v2157_5 d L tab k r g1 g2 hR hin) hc16) = AccMath.accVec (rowF fl tab (wL L).val (2 * t1.val + 1) (2 * k.val + 1)) (offF fl (wL L).val (2 * t1.val + 1) (2 * k.val + 1)) 2 46 :=
      acc_step d L fl tab (wL L).val (2 * t1.val + 1) (2 * k.val + 1) 1 _ hRB ⟨45, by decide⟩ ⟨2, by decide⟩ _ rfl _ hw_v2135_5 _ (k1_off106_form ..) _ hc16
    have s_B2_46 : addf (AccMath.accVec (rowF fl tab (wL L).val (2 * t1.val + 1) (2 * k.val + 1)) (offF fl (wL L).val (2 * t1.val + 1) (2 * k.val + 1)) 2 46) (shapeCast S16 (pair1_last.sl.v2193_5 d L tab k r g1 g2 hR hin) hc16) = AccMath.accVec (rowF fl tab (wL L).val (2 * t1.val + 1) (2 * k.val + 1)) (offF fl (wL L).val (2 * t1.val + 1) (2 * k.val + 1)) 2 47 :=
      acc_step d L fl tab (wL L).val (2 * t1.val + 1) (2 * k.val + 1) 1 _ hRB ⟨46, by decide⟩ ⟨2, by decide⟩ _ rfl _ hw_v2171_5 _ (k1_off107_form ..) _ hc16
    have s_B2_47 : addf (AccMath.accVec (rowF fl tab (wL L).val (2 * t1.val + 1) (2 * k.val + 1)) (offF fl (wL L).val (2 * t1.val + 1) (2 * k.val + 1)) 2 47) (shapeCast S16 (pair1_last.sl.v2229_5 d L tab k r g1 g2 hR hin) hc16) = AccMath.accVec (rowF fl tab (wL L).val (2 * t1.val + 1) (2 * k.val + 1)) (offF fl (wL L).val (2 * t1.val + 1) (2 * k.val + 1)) 2 48 :=
      acc_step d L fl tab (wL L).val (2 * t1.val + 1) (2 * k.val + 1) 1 _ hRB ⟨47, by decide⟩ ⟨2, by decide⟩ _ rfl _ hw_v2207_5 _ (k1_off108_form ..) _ hc16
    have s_B2_48 : addf (AccMath.accVec (rowF fl tab (wL L).val (2 * t1.val + 1) (2 * k.val + 1)) (offF fl (wL L).val (2 * t1.val + 1) (2 * k.val + 1)) 2 48) (shapeCast S16 (pair1_last.sl.v1594 d L tab k r g1 g2 hR hin) hc16) = AccMath.accVec (rowF fl tab (wL L).val (2 * t1.val + 1) (2 * k.val + 1)) (offF fl (wL L).val (2 * t1.val + 1) (2 * k.val + 1)) 2 49 :=
      acc_step d L fl tab (wL L).val (2 * t1.val + 1) (2 * k.val + 1) 1 _ hRB ⟨48, by decide⟩ ⟨2, by decide⟩ _ rfl _ hw_v1572 _ (k1_off110_form ..) _ hc16
    have s_B2_49 : addf (AccMath.accVec (rowF fl tab (wL L).val (2 * t1.val + 1) (2 * k.val + 1)) (offF fl (wL L).val (2 * t1.val + 1) (2 * k.val + 1)) 2 49) (shapeCast S16 (pair1_last.sl.v1628 d L tab k r g1 g2 hR hin) hc16) = AccMath.accVec (rowF fl tab (wL L).val (2 * t1.val + 1) (2 * k.val + 1)) (offF fl (wL L).val (2 * t1.val + 1) (2 * k.val + 1)) 2 50 :=
      acc_step d L fl tab (wL L).val (2 * t1.val + 1) (2 * k.val + 1) 1 _ hRB ⟨49, by decide⟩ ⟨2, by decide⟩ _ rfl _ hw_v1606 _ (k1_off111_form ..) _ hc16
    have hP_B2 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val + 1)) (offF fl (wL L).val (2 * t1.val + 1) (2 * k.val + 1)) 2 0) (shapeCast S16 (pair1_last.sl.v1689_3 d L tab k r g1 g2 hR hin) hc16)) (shapeCast S16 (pair1_last.sl.v1725_3 d L tab k r g1 g2 hR hin) hc16)) (shapeCast S16 (pair1_last.sl.v1761_3 d L tab k r g1 g2 hR hin) hc16)) (shapeCast S16 (pair1_last.sl.v1797_3 d L tab k r g1 g2 hR hin) hc16)) (shapeCast S16 (pair1_last.sl.v1833_3 d L tab k r g1 g2 hR hin) hc16)) (shapeCast S16 (pair1_last.sl.v1869_3 d L tab k r g1 g2 hR hin) hc16)) (shapeCast S16 (pair1_last.sl.v1905_3 d L tab k r g1 g2 hR hin) hc16)) (shapeCast S16 (pair1_last.sl.v1941_3 d L tab k r g1 g2 hR hin) hc16)) (shapeCast S16 (pair1_last.sl.v1977_3 d L tab k r g1 g2 hR hin) hc16)) (shapeCast S16 (pair1_last.sl.v2013_3 d L tab k r g1 g2 hR hin) hc16)) (shapeCast S16 (pair1_last.sl.v2049_3 d L tab k r g1 g2 hR hin) hc16)) (shapeCast S16 (pair1_last.sl.v2085_3 d L tab k r g1 g2 hR hin) hc16)) (shapeCast S16 (pair1_last.sl.v2121_3 d L tab k r g1 g2 hR hin) hc16)) (shapeCast S16 (pair1_last.sl.v2157_3 d L tab k r g1 g2 hR hin) hc16)) (shapeCast S16 (pair1_last.sl.v2193_3 d L tab k r g1 g2 hR hin) hc16)) (shapeCast S16 (pair1_last.sl.v2229_3 d L tab k r g1 g2 hR hin) hc16)) (shapeCast S16 (pair1_last.sl.v1689_4 d L tab k r g1 g2 hR hin) hc16)) (shapeCast S16 (pair1_last.sl.v1725_4 d L tab k r g1 g2 hR hin) hc16)) (shapeCast S16 (pair1_last.sl.v1761_4 d L tab k r g1 g2 hR hin) hc16)) (shapeCast S16 (pair1_last.sl.v1797_4 d L tab k r g1 g2 hR hin) hc16)) (shapeCast S16 (pair1_last.sl.v1833_4 d L tab k r g1 g2 hR hin) hc16)) (shapeCast S16 (pair1_last.sl.v1869_4 d L tab k r g1 g2 hR hin) hc16)) (shapeCast S16 (pair1_last.sl.v1905_4 d L tab k r g1 g2 hR hin) hc16)) (shapeCast S16 (pair1_last.sl.v1941_4 d L tab k r g1 g2 hR hin) hc16)) (shapeCast S16 (pair1_last.sl.v1977_4 d L tab k r g1 g2 hR hin) hc16)) (shapeCast S16 (pair1_last.sl.v2013_4 d L tab k r g1 g2 hR hin) hc16)) (shapeCast S16 (pair1_last.sl.v2049_4 d L tab k r g1 g2 hR hin) hc16)) (shapeCast S16 (pair1_last.sl.v2085_4 d L tab k r g1 g2 hR hin) hc16)) (shapeCast S16 (pair1_last.sl.v2121_4 d L tab k r g1 g2 hR hin) hc16)) (shapeCast S16 (pair1_last.sl.v2157_4 d L tab k r g1 g2 hR hin) hc16)) (shapeCast S16 (pair1_last.sl.v2193_4 d L tab k r g1 g2 hR hin) hc16)) (shapeCast S16 (pair1_last.sl.v2229_4 d L tab k r g1 g2 hR hin) hc16)) (shapeCast S16 (pair1_last.sl.v1689_5 d L tab k r g1 g2 hR hin) hc16)) (shapeCast S16 (pair1_last.sl.v1725_5 d L tab k r g1 g2 hR hin) hc16)) (shapeCast S16 (pair1_last.sl.v1761_5 d L tab k r g1 g2 hR hin) hc16)) (shapeCast S16 (pair1_last.sl.v1797_5 d L tab k r g1 g2 hR hin) hc16)) (shapeCast S16 (pair1_last.sl.v1833_5 d L tab k r g1 g2 hR hin) hc16)) (shapeCast S16 (pair1_last.sl.v1869_5 d L tab k r g1 g2 hR hin) hc16)) (shapeCast S16 (pair1_last.sl.v1905_5 d L tab k r g1 g2 hR hin) hc16)) (shapeCast S16 (pair1_last.sl.v1941_5 d L tab k r g1 g2 hR hin) hc16)) (shapeCast S16 (pair1_last.sl.v1977_5 d L tab k r g1 g2 hR hin) hc16)) (shapeCast S16 (pair1_last.sl.v2013_5 d L tab k r g1 g2 hR hin) hc16)) (shapeCast S16 (pair1_last.sl.v2049_5 d L tab k r g1 g2 hR hin) hc16)) (shapeCast S16 (pair1_last.sl.v2085_5 d L tab k r g1 g2 hR hin) hc16)) (shapeCast S16 (pair1_last.sl.v2121_5 d L tab k r g1 g2 hR hin) hc16)) (shapeCast S16 (pair1_last.sl.v2157_5 d L tab k r g1 g2 hR hin) hc16)) (shapeCast S16 (pair1_last.sl.v2193_5 d L tab k r g1 g2 hR hin) hc16)) (shapeCast S16 (pair1_last.sl.v2229_5 d L tab k r g1 g2 hR hin) hc16)) (shapeCast S16 (pair1_last.sl.v1594 d L tab k r g1 g2 hR hin) hc16)) (shapeCast S16 (pair1_last.sl.v1628 d L tab k r g1 g2 hR hin) hc16)) hc1 x = Spec.bagPartial fl tab (128 * (wL L).val + 16 * (2 * t1.val + 1) + (2 * k.val + 1)) (16 * 2 + (x 2).val) 50 := fun x => by
      rw [s_B2_0, s_B2_1, s_B2_2, s_B2_3, s_B2_4, s_B2_5, s_B2_6, s_B2_7, s_B2_8, s_B2_9, s_B2_10, s_B2_11, s_B2_12, s_B2_13, s_B2_14, s_B2_15, s_B2_16, s_B2_17, s_B2_18, s_B2_19, s_B2_20, s_B2_21, s_B2_22, s_B2_23, s_B2_24, s_B2_25, s_B2_26, s_B2_27, s_B2_28, s_B2_29, s_B2_30, s_B2_31, s_B2_32, s_B2_33, s_B2_34, s_B2_35, s_B2_36, s_B2_37, s_B2_38, s_B2_39, s_B2_40, s_B2_41, s_B2_42, s_B2_43, s_B2_44, s_B2_45, s_B2_46, s_B2_47, s_B2_48, s_B2_49]
      exact payload_ok fl tab (wL L).val (2 * t1.val + 1) (2 * k.val + 1) ⟨2, by decide⟩ hc1 x
    have s_B3_0 : addf (AccMath.accVec (rowF fl tab (wL L).val (2 * t1.val + 1) (2 * k.val + 1)) (offF fl (wL L).val (2 * t1.val + 1) (2 * k.val + 1)) 3 0) (shapeCast S16 (pair1_last.sl.v1697_3 d L tab k r g1 g2 hR hin) hc16) = AccMath.accVec (rowF fl tab (wL L).val (2 * t1.val + 1) (2 * k.val + 1)) (offF fl (wL L).val (2 * t1.val + 1) (2 * k.val + 1)) 3 1 :=
      acc_step d L fl tab (wL L).val (2 * t1.val + 1) (2 * k.val + 1) 1 _ hRB ⟨0, by decide⟩ ⟨3, by decide⟩ _ rfl _ hw_v1667_3 _ (k1_off93_form ..) _ hc16
    have s_B3_1 : addf (AccMath.accVec (rowF fl tab (wL L).val (2 * t1.val + 1) (2 * k.val + 1)) (offF fl (wL L).val (2 * t1.val + 1) (2 * k.val + 1)) 3 1) (shapeCast S16 (pair1_last.sl.v1733_3 d L tab k r g1 g2 hR hin) hc16) = AccMath.accVec (rowF fl tab (wL L).val (2 * t1.val + 1) (2 * k.val + 1)) (offF fl (wL L).val (2 * t1.val + 1) (2 * k.val + 1)) 3 2 :=
      acc_step d L fl tab (wL L).val (2 * t1.val + 1) (2 * k.val + 1) 1 _ hRB ⟨1, by decide⟩ ⟨3, by decide⟩ _ rfl _ hw_v1703_3 _ (k1_off94_form ..) _ hc16
    have s_B3_2 : addf (AccMath.accVec (rowF fl tab (wL L).val (2 * t1.val + 1) (2 * k.val + 1)) (offF fl (wL L).val (2 * t1.val + 1) (2 * k.val + 1)) 3 2) (shapeCast S16 (pair1_last.sl.v1769_3 d L tab k r g1 g2 hR hin) hc16) = AccMath.accVec (rowF fl tab (wL L).val (2 * t1.val + 1) (2 * k.val + 1)) (offF fl (wL L).val (2 * t1.val + 1) (2 * k.val + 1)) 3 3 :=
      acc_step d L fl tab (wL L).val (2 * t1.val + 1) (2 * k.val + 1) 1 _ hRB ⟨2, by decide⟩ ⟨3, by decide⟩ _ rfl _ hw_v1739_3 _ (k1_off95_form ..) _ hc16
    have s_B3_3 : addf (AccMath.accVec (rowF fl tab (wL L).val (2 * t1.val + 1) (2 * k.val + 1)) (offF fl (wL L).val (2 * t1.val + 1) (2 * k.val + 1)) 3 3) (shapeCast S16 (pair1_last.sl.v1805_3 d L tab k r g1 g2 hR hin) hc16) = AccMath.accVec (rowF fl tab (wL L).val (2 * t1.val + 1) (2 * k.val + 1)) (offF fl (wL L).val (2 * t1.val + 1) (2 * k.val + 1)) 3 4 :=
      acc_step d L fl tab (wL L).val (2 * t1.val + 1) (2 * k.val + 1) 1 _ hRB ⟨3, by decide⟩ ⟨3, by decide⟩ _ rfl _ hw_v1775_3 _ (k1_off96_form ..) _ hc16
    have s_B3_4 : addf (AccMath.accVec (rowF fl tab (wL L).val (2 * t1.val + 1) (2 * k.val + 1)) (offF fl (wL L).val (2 * t1.val + 1) (2 * k.val + 1)) 3 4) (shapeCast S16 (pair1_last.sl.v1841_3 d L tab k r g1 g2 hR hin) hc16) = AccMath.accVec (rowF fl tab (wL L).val (2 * t1.val + 1) (2 * k.val + 1)) (offF fl (wL L).val (2 * t1.val + 1) (2 * k.val + 1)) 3 5 :=
      acc_step d L fl tab (wL L).val (2 * t1.val + 1) (2 * k.val + 1) 1 _ hRB ⟨4, by decide⟩ ⟨3, by decide⟩ _ rfl _ hw_v1811_3 _ (k1_off97_form ..) _ hc16
    have s_B3_5 : addf (AccMath.accVec (rowF fl tab (wL L).val (2 * t1.val + 1) (2 * k.val + 1)) (offF fl (wL L).val (2 * t1.val + 1) (2 * k.val + 1)) 3 5) (shapeCast S16 (pair1_last.sl.v1877_3 d L tab k r g1 g2 hR hin) hc16) = AccMath.accVec (rowF fl tab (wL L).val (2 * t1.val + 1) (2 * k.val + 1)) (offF fl (wL L).val (2 * t1.val + 1) (2 * k.val + 1)) 3 6 :=
      acc_step d L fl tab (wL L).val (2 * t1.val + 1) (2 * k.val + 1) 1 _ hRB ⟨5, by decide⟩ ⟨3, by decide⟩ _ rfl _ hw_v1847_3 _ (k1_off98_form ..) _ hc16
    have s_B3_6 : addf (AccMath.accVec (rowF fl tab (wL L).val (2 * t1.val + 1) (2 * k.val + 1)) (offF fl (wL L).val (2 * t1.val + 1) (2 * k.val + 1)) 3 6) (shapeCast S16 (pair1_last.sl.v1913_3 d L tab k r g1 g2 hR hin) hc16) = AccMath.accVec (rowF fl tab (wL L).val (2 * t1.val + 1) (2 * k.val + 1)) (offF fl (wL L).val (2 * t1.val + 1) (2 * k.val + 1)) 3 7 :=
      acc_step d L fl tab (wL L).val (2 * t1.val + 1) (2 * k.val + 1) 1 _ hRB ⟨6, by decide⟩ ⟨3, by decide⟩ _ rfl _ hw_v1883_3 _ (k1_off99_form ..) _ hc16
    have s_B3_7 : addf (AccMath.accVec (rowF fl tab (wL L).val (2 * t1.val + 1) (2 * k.val + 1)) (offF fl (wL L).val (2 * t1.val + 1) (2 * k.val + 1)) 3 7) (shapeCast S16 (pair1_last.sl.v1949_3 d L tab k r g1 g2 hR hin) hc16) = AccMath.accVec (rowF fl tab (wL L).val (2 * t1.val + 1) (2 * k.val + 1)) (offF fl (wL L).val (2 * t1.val + 1) (2 * k.val + 1)) 3 8 :=
      acc_step d L fl tab (wL L).val (2 * t1.val + 1) (2 * k.val + 1) 1 _ hRB ⟨7, by decide⟩ ⟨3, by decide⟩ _ rfl _ hw_v1919_3 _ (k1_off100_form ..) _ hc16
    have s_B3_8 : addf (AccMath.accVec (rowF fl tab (wL L).val (2 * t1.val + 1) (2 * k.val + 1)) (offF fl (wL L).val (2 * t1.val + 1) (2 * k.val + 1)) 3 8) (shapeCast S16 (pair1_last.sl.v1985_3 d L tab k r g1 g2 hR hin) hc16) = AccMath.accVec (rowF fl tab (wL L).val (2 * t1.val + 1) (2 * k.val + 1)) (offF fl (wL L).val (2 * t1.val + 1) (2 * k.val + 1)) 3 9 :=
      acc_step d L fl tab (wL L).val (2 * t1.val + 1) (2 * k.val + 1) 1 _ hRB ⟨8, by decide⟩ ⟨3, by decide⟩ _ rfl _ hw_v1955_3 _ (k1_off101_form ..) _ hc16
    have s_B3_9 : addf (AccMath.accVec (rowF fl tab (wL L).val (2 * t1.val + 1) (2 * k.val + 1)) (offF fl (wL L).val (2 * t1.val + 1) (2 * k.val + 1)) 3 9) (shapeCast S16 (pair1_last.sl.v2021_3 d L tab k r g1 g2 hR hin) hc16) = AccMath.accVec (rowF fl tab (wL L).val (2 * t1.val + 1) (2 * k.val + 1)) (offF fl (wL L).val (2 * t1.val + 1) (2 * k.val + 1)) 3 10 :=
      acc_step d L fl tab (wL L).val (2 * t1.val + 1) (2 * k.val + 1) 1 _ hRB ⟨9, by decide⟩ ⟨3, by decide⟩ _ rfl _ hw_v1991_3 _ (k1_off102_form ..) _ hc16
    have s_B3_10 : addf (AccMath.accVec (rowF fl tab (wL L).val (2 * t1.val + 1) (2 * k.val + 1)) (offF fl (wL L).val (2 * t1.val + 1) (2 * k.val + 1)) 3 10) (shapeCast S16 (pair1_last.sl.v2057_3 d L tab k r g1 g2 hR hin) hc16) = AccMath.accVec (rowF fl tab (wL L).val (2 * t1.val + 1) (2 * k.val + 1)) (offF fl (wL L).val (2 * t1.val + 1) (2 * k.val + 1)) 3 11 :=
      acc_step d L fl tab (wL L).val (2 * t1.val + 1) (2 * k.val + 1) 1 _ hRB ⟨10, by decide⟩ ⟨3, by decide⟩ _ rfl _ hw_v2027_3 _ (k1_off103_form ..) _ hc16
    have s_B3_11 : addf (AccMath.accVec (rowF fl tab (wL L).val (2 * t1.val + 1) (2 * k.val + 1)) (offF fl (wL L).val (2 * t1.val + 1) (2 * k.val + 1)) 3 11) (shapeCast S16 (pair1_last.sl.v2093_3 d L tab k r g1 g2 hR hin) hc16) = AccMath.accVec (rowF fl tab (wL L).val (2 * t1.val + 1) (2 * k.val + 1)) (offF fl (wL L).val (2 * t1.val + 1) (2 * k.val + 1)) 3 12 :=
      acc_step d L fl tab (wL L).val (2 * t1.val + 1) (2 * k.val + 1) 1 _ hRB ⟨11, by decide⟩ ⟨3, by decide⟩ _ rfl _ hw_v2063_3 _ (k1_off104_form ..) _ hc16
    have s_B3_12 : addf (AccMath.accVec (rowF fl tab (wL L).val (2 * t1.val + 1) (2 * k.val + 1)) (offF fl (wL L).val (2 * t1.val + 1) (2 * k.val + 1)) 3 12) (shapeCast S16 (pair1_last.sl.v2129_3 d L tab k r g1 g2 hR hin) hc16) = AccMath.accVec (rowF fl tab (wL L).val (2 * t1.val + 1) (2 * k.val + 1)) (offF fl (wL L).val (2 * t1.val + 1) (2 * k.val + 1)) 3 13 :=
      acc_step d L fl tab (wL L).val (2 * t1.val + 1) (2 * k.val + 1) 1 _ hRB ⟨12, by decide⟩ ⟨3, by decide⟩ _ rfl _ hw_v2099_3 _ (k1_off105_form ..) _ hc16
    have s_B3_13 : addf (AccMath.accVec (rowF fl tab (wL L).val (2 * t1.val + 1) (2 * k.val + 1)) (offF fl (wL L).val (2 * t1.val + 1) (2 * k.val + 1)) 3 13) (shapeCast S16 (pair1_last.sl.v2165_3 d L tab k r g1 g2 hR hin) hc16) = AccMath.accVec (rowF fl tab (wL L).val (2 * t1.val + 1) (2 * k.val + 1)) (offF fl (wL L).val (2 * t1.val + 1) (2 * k.val + 1)) 3 14 :=
      acc_step d L fl tab (wL L).val (2 * t1.val + 1) (2 * k.val + 1) 1 _ hRB ⟨13, by decide⟩ ⟨3, by decide⟩ _ rfl _ hw_v2135_3 _ (k1_off106_form ..) _ hc16
    have s_B3_14 : addf (AccMath.accVec (rowF fl tab (wL L).val (2 * t1.val + 1) (2 * k.val + 1)) (offF fl (wL L).val (2 * t1.val + 1) (2 * k.val + 1)) 3 14) (shapeCast S16 (pair1_last.sl.v2201_3 d L tab k r g1 g2 hR hin) hc16) = AccMath.accVec (rowF fl tab (wL L).val (2 * t1.val + 1) (2 * k.val + 1)) (offF fl (wL L).val (2 * t1.val + 1) (2 * k.val + 1)) 3 15 :=
      acc_step d L fl tab (wL L).val (2 * t1.val + 1) (2 * k.val + 1) 1 _ hRB ⟨14, by decide⟩ ⟨3, by decide⟩ _ rfl _ hw_v2171_3 _ (k1_off107_form ..) _ hc16
    have s_B3_15 : addf (AccMath.accVec (rowF fl tab (wL L).val (2 * t1.val + 1) (2 * k.val + 1)) (offF fl (wL L).val (2 * t1.val + 1) (2 * k.val + 1)) 3 15) (shapeCast S16 (pair1_last.sl.v2237_3 d L tab k r g1 g2 hR hin) hc16) = AccMath.accVec (rowF fl tab (wL L).val (2 * t1.val + 1) (2 * k.val + 1)) (offF fl (wL L).val (2 * t1.val + 1) (2 * k.val + 1)) 3 16 :=
      acc_step d L fl tab (wL L).val (2 * t1.val + 1) (2 * k.val + 1) 1 _ hRB ⟨15, by decide⟩ ⟨3, by decide⟩ _ rfl _ hw_v2207_3 _ (k1_off108_form ..) _ hc16
    have s_B3_16 : addf (AccMath.accVec (rowF fl tab (wL L).val (2 * t1.val + 1) (2 * k.val + 1)) (offF fl (wL L).val (2 * t1.val + 1) (2 * k.val + 1)) 3 16) (shapeCast S16 (pair1_last.sl.v1697_4 d L tab k r g1 g2 hR hin) hc16) = AccMath.accVec (rowF fl tab (wL L).val (2 * t1.val + 1) (2 * k.val + 1)) (offF fl (wL L).val (2 * t1.val + 1) (2 * k.val + 1)) 3 17 :=
      acc_step d L fl tab (wL L).val (2 * t1.val + 1) (2 * k.val + 1) 1 _ hRB ⟨16, by decide⟩ ⟨3, by decide⟩ _ rfl _ hw_v1667_4 _ (k1_off93_form ..) _ hc16
    have s_B3_17 : addf (AccMath.accVec (rowF fl tab (wL L).val (2 * t1.val + 1) (2 * k.val + 1)) (offF fl (wL L).val (2 * t1.val + 1) (2 * k.val + 1)) 3 17) (shapeCast S16 (pair1_last.sl.v1733_4 d L tab k r g1 g2 hR hin) hc16) = AccMath.accVec (rowF fl tab (wL L).val (2 * t1.val + 1) (2 * k.val + 1)) (offF fl (wL L).val (2 * t1.val + 1) (2 * k.val + 1)) 3 18 :=
      acc_step d L fl tab (wL L).val (2 * t1.val + 1) (2 * k.val + 1) 1 _ hRB ⟨17, by decide⟩ ⟨3, by decide⟩ _ rfl _ hw_v1703_4 _ (k1_off94_form ..) _ hc16
    have s_B3_18 : addf (AccMath.accVec (rowF fl tab (wL L).val (2 * t1.val + 1) (2 * k.val + 1)) (offF fl (wL L).val (2 * t1.val + 1) (2 * k.val + 1)) 3 18) (shapeCast S16 (pair1_last.sl.v1769_4 d L tab k r g1 g2 hR hin) hc16) = AccMath.accVec (rowF fl tab (wL L).val (2 * t1.val + 1) (2 * k.val + 1)) (offF fl (wL L).val (2 * t1.val + 1) (2 * k.val + 1)) 3 19 :=
      acc_step d L fl tab (wL L).val (2 * t1.val + 1) (2 * k.val + 1) 1 _ hRB ⟨18, by decide⟩ ⟨3, by decide⟩ _ rfl _ hw_v1739_4 _ (k1_off95_form ..) _ hc16
    have s_B3_19 : addf (AccMath.accVec (rowF fl tab (wL L).val (2 * t1.val + 1) (2 * k.val + 1)) (offF fl (wL L).val (2 * t1.val + 1) (2 * k.val + 1)) 3 19) (shapeCast S16 (pair1_last.sl.v1805_4 d L tab k r g1 g2 hR hin) hc16) = AccMath.accVec (rowF fl tab (wL L).val (2 * t1.val + 1) (2 * k.val + 1)) (offF fl (wL L).val (2 * t1.val + 1) (2 * k.val + 1)) 3 20 :=
      acc_step d L fl tab (wL L).val (2 * t1.val + 1) (2 * k.val + 1) 1 _ hRB ⟨19, by decide⟩ ⟨3, by decide⟩ _ rfl _ hw_v1775_4 _ (k1_off96_form ..) _ hc16
    have s_B3_20 : addf (AccMath.accVec (rowF fl tab (wL L).val (2 * t1.val + 1) (2 * k.val + 1)) (offF fl (wL L).val (2 * t1.val + 1) (2 * k.val + 1)) 3 20) (shapeCast S16 (pair1_last.sl.v1841_4 d L tab k r g1 g2 hR hin) hc16) = AccMath.accVec (rowF fl tab (wL L).val (2 * t1.val + 1) (2 * k.val + 1)) (offF fl (wL L).val (2 * t1.val + 1) (2 * k.val + 1)) 3 21 :=
      acc_step d L fl tab (wL L).val (2 * t1.val + 1) (2 * k.val + 1) 1 _ hRB ⟨20, by decide⟩ ⟨3, by decide⟩ _ rfl _ hw_v1811_4 _ (k1_off97_form ..) _ hc16
    have s_B3_21 : addf (AccMath.accVec (rowF fl tab (wL L).val (2 * t1.val + 1) (2 * k.val + 1)) (offF fl (wL L).val (2 * t1.val + 1) (2 * k.val + 1)) 3 21) (shapeCast S16 (pair1_last.sl.v1877_4 d L tab k r g1 g2 hR hin) hc16) = AccMath.accVec (rowF fl tab (wL L).val (2 * t1.val + 1) (2 * k.val + 1)) (offF fl (wL L).val (2 * t1.val + 1) (2 * k.val + 1)) 3 22 :=
      acc_step d L fl tab (wL L).val (2 * t1.val + 1) (2 * k.val + 1) 1 _ hRB ⟨21, by decide⟩ ⟨3, by decide⟩ _ rfl _ hw_v1847_4 _ (k1_off98_form ..) _ hc16
    have s_B3_22 : addf (AccMath.accVec (rowF fl tab (wL L).val (2 * t1.val + 1) (2 * k.val + 1)) (offF fl (wL L).val (2 * t1.val + 1) (2 * k.val + 1)) 3 22) (shapeCast S16 (pair1_last.sl.v1913_4 d L tab k r g1 g2 hR hin) hc16) = AccMath.accVec (rowF fl tab (wL L).val (2 * t1.val + 1) (2 * k.val + 1)) (offF fl (wL L).val (2 * t1.val + 1) (2 * k.val + 1)) 3 23 :=
      acc_step d L fl tab (wL L).val (2 * t1.val + 1) (2 * k.val + 1) 1 _ hRB ⟨22, by decide⟩ ⟨3, by decide⟩ _ rfl _ hw_v1883_4 _ (k1_off99_form ..) _ hc16
    have s_B3_23 : addf (AccMath.accVec (rowF fl tab (wL L).val (2 * t1.val + 1) (2 * k.val + 1)) (offF fl (wL L).val (2 * t1.val + 1) (2 * k.val + 1)) 3 23) (shapeCast S16 (pair1_last.sl.v1949_4 d L tab k r g1 g2 hR hin) hc16) = AccMath.accVec (rowF fl tab (wL L).val (2 * t1.val + 1) (2 * k.val + 1)) (offF fl (wL L).val (2 * t1.val + 1) (2 * k.val + 1)) 3 24 :=
      acc_step d L fl tab (wL L).val (2 * t1.val + 1) (2 * k.val + 1) 1 _ hRB ⟨23, by decide⟩ ⟨3, by decide⟩ _ rfl _ hw_v1919_4 _ (k1_off100_form ..) _ hc16
    have s_B3_24 : addf (AccMath.accVec (rowF fl tab (wL L).val (2 * t1.val + 1) (2 * k.val + 1)) (offF fl (wL L).val (2 * t1.val + 1) (2 * k.val + 1)) 3 24) (shapeCast S16 (pair1_last.sl.v1985_4 d L tab k r g1 g2 hR hin) hc16) = AccMath.accVec (rowF fl tab (wL L).val (2 * t1.val + 1) (2 * k.val + 1)) (offF fl (wL L).val (2 * t1.val + 1) (2 * k.val + 1)) 3 25 :=
      acc_step d L fl tab (wL L).val (2 * t1.val + 1) (2 * k.val + 1) 1 _ hRB ⟨24, by decide⟩ ⟨3, by decide⟩ _ rfl _ hw_v1955_4 _ (k1_off101_form ..) _ hc16
    have s_B3_25 : addf (AccMath.accVec (rowF fl tab (wL L).val (2 * t1.val + 1) (2 * k.val + 1)) (offF fl (wL L).val (2 * t1.val + 1) (2 * k.val + 1)) 3 25) (shapeCast S16 (pair1_last.sl.v2021_4 d L tab k r g1 g2 hR hin) hc16) = AccMath.accVec (rowF fl tab (wL L).val (2 * t1.val + 1) (2 * k.val + 1)) (offF fl (wL L).val (2 * t1.val + 1) (2 * k.val + 1)) 3 26 :=
      acc_step d L fl tab (wL L).val (2 * t1.val + 1) (2 * k.val + 1) 1 _ hRB ⟨25, by decide⟩ ⟨3, by decide⟩ _ rfl _ hw_v1991_4 _ (k1_off102_form ..) _ hc16
    have s_B3_26 : addf (AccMath.accVec (rowF fl tab (wL L).val (2 * t1.val + 1) (2 * k.val + 1)) (offF fl (wL L).val (2 * t1.val + 1) (2 * k.val + 1)) 3 26) (shapeCast S16 (pair1_last.sl.v2057_4 d L tab k r g1 g2 hR hin) hc16) = AccMath.accVec (rowF fl tab (wL L).val (2 * t1.val + 1) (2 * k.val + 1)) (offF fl (wL L).val (2 * t1.val + 1) (2 * k.val + 1)) 3 27 :=
      acc_step d L fl tab (wL L).val (2 * t1.val + 1) (2 * k.val + 1) 1 _ hRB ⟨26, by decide⟩ ⟨3, by decide⟩ _ rfl _ hw_v2027_4 _ (k1_off103_form ..) _ hc16
    have s_B3_27 : addf (AccMath.accVec (rowF fl tab (wL L).val (2 * t1.val + 1) (2 * k.val + 1)) (offF fl (wL L).val (2 * t1.val + 1) (2 * k.val + 1)) 3 27) (shapeCast S16 (pair1_last.sl.v2093_4 d L tab k r g1 g2 hR hin) hc16) = AccMath.accVec (rowF fl tab (wL L).val (2 * t1.val + 1) (2 * k.val + 1)) (offF fl (wL L).val (2 * t1.val + 1) (2 * k.val + 1)) 3 28 :=
      acc_step d L fl tab (wL L).val (2 * t1.val + 1) (2 * k.val + 1) 1 _ hRB ⟨27, by decide⟩ ⟨3, by decide⟩ _ rfl _ hw_v2063_4 _ (k1_off104_form ..) _ hc16
    have s_B3_28 : addf (AccMath.accVec (rowF fl tab (wL L).val (2 * t1.val + 1) (2 * k.val + 1)) (offF fl (wL L).val (2 * t1.val + 1) (2 * k.val + 1)) 3 28) (shapeCast S16 (pair1_last.sl.v2129_4 d L tab k r g1 g2 hR hin) hc16) = AccMath.accVec (rowF fl tab (wL L).val (2 * t1.val + 1) (2 * k.val + 1)) (offF fl (wL L).val (2 * t1.val + 1) (2 * k.val + 1)) 3 29 :=
      acc_step d L fl tab (wL L).val (2 * t1.val + 1) (2 * k.val + 1) 1 _ hRB ⟨28, by decide⟩ ⟨3, by decide⟩ _ rfl _ hw_v2099_4 _ (k1_off105_form ..) _ hc16
    have s_B3_29 : addf (AccMath.accVec (rowF fl tab (wL L).val (2 * t1.val + 1) (2 * k.val + 1)) (offF fl (wL L).val (2 * t1.val + 1) (2 * k.val + 1)) 3 29) (shapeCast S16 (pair1_last.sl.v2165_4 d L tab k r g1 g2 hR hin) hc16) = AccMath.accVec (rowF fl tab (wL L).val (2 * t1.val + 1) (2 * k.val + 1)) (offF fl (wL L).val (2 * t1.val + 1) (2 * k.val + 1)) 3 30 :=
      acc_step d L fl tab (wL L).val (2 * t1.val + 1) (2 * k.val + 1) 1 _ hRB ⟨29, by decide⟩ ⟨3, by decide⟩ _ rfl _ hw_v2135_4 _ (k1_off106_form ..) _ hc16
    have s_B3_30 : addf (AccMath.accVec (rowF fl tab (wL L).val (2 * t1.val + 1) (2 * k.val + 1)) (offF fl (wL L).val (2 * t1.val + 1) (2 * k.val + 1)) 3 30) (shapeCast S16 (pair1_last.sl.v2201_4 d L tab k r g1 g2 hR hin) hc16) = AccMath.accVec (rowF fl tab (wL L).val (2 * t1.val + 1) (2 * k.val + 1)) (offF fl (wL L).val (2 * t1.val + 1) (2 * k.val + 1)) 3 31 :=
      acc_step d L fl tab (wL L).val (2 * t1.val + 1) (2 * k.val + 1) 1 _ hRB ⟨30, by decide⟩ ⟨3, by decide⟩ _ rfl _ hw_v2171_4 _ (k1_off107_form ..) _ hc16
    have s_B3_31 : addf (AccMath.accVec (rowF fl tab (wL L).val (2 * t1.val + 1) (2 * k.val + 1)) (offF fl (wL L).val (2 * t1.val + 1) (2 * k.val + 1)) 3 31) (shapeCast S16 (pair1_last.sl.v2237_4 d L tab k r g1 g2 hR hin) hc16) = AccMath.accVec (rowF fl tab (wL L).val (2 * t1.val + 1) (2 * k.val + 1)) (offF fl (wL L).val (2 * t1.val + 1) (2 * k.val + 1)) 3 32 :=
      acc_step d L fl tab (wL L).val (2 * t1.val + 1) (2 * k.val + 1) 1 _ hRB ⟨31, by decide⟩ ⟨3, by decide⟩ _ rfl _ hw_v2207_4 _ (k1_off108_form ..) _ hc16
    have s_B3_32 : addf (AccMath.accVec (rowF fl tab (wL L).val (2 * t1.val + 1) (2 * k.val + 1)) (offF fl (wL L).val (2 * t1.val + 1) (2 * k.val + 1)) 3 32) (shapeCast S16 (pair1_last.sl.v1697_5 d L tab k r g1 g2 hR hin) hc16) = AccMath.accVec (rowF fl tab (wL L).val (2 * t1.val + 1) (2 * k.val + 1)) (offF fl (wL L).val (2 * t1.val + 1) (2 * k.val + 1)) 3 33 :=
      acc_step d L fl tab (wL L).val (2 * t1.val + 1) (2 * k.val + 1) 1 _ hRB ⟨32, by decide⟩ ⟨3, by decide⟩ _ rfl _ hw_v1667_5 _ (k1_off93_form ..) _ hc16
    have s_B3_33 : addf (AccMath.accVec (rowF fl tab (wL L).val (2 * t1.val + 1) (2 * k.val + 1)) (offF fl (wL L).val (2 * t1.val + 1) (2 * k.val + 1)) 3 33) (shapeCast S16 (pair1_last.sl.v1733_5 d L tab k r g1 g2 hR hin) hc16) = AccMath.accVec (rowF fl tab (wL L).val (2 * t1.val + 1) (2 * k.val + 1)) (offF fl (wL L).val (2 * t1.val + 1) (2 * k.val + 1)) 3 34 :=
      acc_step d L fl tab (wL L).val (2 * t1.val + 1) (2 * k.val + 1) 1 _ hRB ⟨33, by decide⟩ ⟨3, by decide⟩ _ rfl _ hw_v1703_5 _ (k1_off94_form ..) _ hc16
    have s_B3_34 : addf (AccMath.accVec (rowF fl tab (wL L).val (2 * t1.val + 1) (2 * k.val + 1)) (offF fl (wL L).val (2 * t1.val + 1) (2 * k.val + 1)) 3 34) (shapeCast S16 (pair1_last.sl.v1769_5 d L tab k r g1 g2 hR hin) hc16) = AccMath.accVec (rowF fl tab (wL L).val (2 * t1.val + 1) (2 * k.val + 1)) (offF fl (wL L).val (2 * t1.val + 1) (2 * k.val + 1)) 3 35 :=
      acc_step d L fl tab (wL L).val (2 * t1.val + 1) (2 * k.val + 1) 1 _ hRB ⟨34, by decide⟩ ⟨3, by decide⟩ _ rfl _ hw_v1739_5 _ (k1_off95_form ..) _ hc16
    have s_B3_35 : addf (AccMath.accVec (rowF fl tab (wL L).val (2 * t1.val + 1) (2 * k.val + 1)) (offF fl (wL L).val (2 * t1.val + 1) (2 * k.val + 1)) 3 35) (shapeCast S16 (pair1_last.sl.v1805_5 d L tab k r g1 g2 hR hin) hc16) = AccMath.accVec (rowF fl tab (wL L).val (2 * t1.val + 1) (2 * k.val + 1)) (offF fl (wL L).val (2 * t1.val + 1) (2 * k.val + 1)) 3 36 :=
      acc_step d L fl tab (wL L).val (2 * t1.val + 1) (2 * k.val + 1) 1 _ hRB ⟨35, by decide⟩ ⟨3, by decide⟩ _ rfl _ hw_v1775_5 _ (k1_off96_form ..) _ hc16
    have s_B3_36 : addf (AccMath.accVec (rowF fl tab (wL L).val (2 * t1.val + 1) (2 * k.val + 1)) (offF fl (wL L).val (2 * t1.val + 1) (2 * k.val + 1)) 3 36) (shapeCast S16 (pair1_last.sl.v1841_5 d L tab k r g1 g2 hR hin) hc16) = AccMath.accVec (rowF fl tab (wL L).val (2 * t1.val + 1) (2 * k.val + 1)) (offF fl (wL L).val (2 * t1.val + 1) (2 * k.val + 1)) 3 37 :=
      acc_step d L fl tab (wL L).val (2 * t1.val + 1) (2 * k.val + 1) 1 _ hRB ⟨36, by decide⟩ ⟨3, by decide⟩ _ rfl _ hw_v1811_5 _ (k1_off97_form ..) _ hc16
    have s_B3_37 : addf (AccMath.accVec (rowF fl tab (wL L).val (2 * t1.val + 1) (2 * k.val + 1)) (offF fl (wL L).val (2 * t1.val + 1) (2 * k.val + 1)) 3 37) (shapeCast S16 (pair1_last.sl.v1877_5 d L tab k r g1 g2 hR hin) hc16) = AccMath.accVec (rowF fl tab (wL L).val (2 * t1.val + 1) (2 * k.val + 1)) (offF fl (wL L).val (2 * t1.val + 1) (2 * k.val + 1)) 3 38 :=
      acc_step d L fl tab (wL L).val (2 * t1.val + 1) (2 * k.val + 1) 1 _ hRB ⟨37, by decide⟩ ⟨3, by decide⟩ _ rfl _ hw_v1847_5 _ (k1_off98_form ..) _ hc16
    have s_B3_38 : addf (AccMath.accVec (rowF fl tab (wL L).val (2 * t1.val + 1) (2 * k.val + 1)) (offF fl (wL L).val (2 * t1.val + 1) (2 * k.val + 1)) 3 38) (shapeCast S16 (pair1_last.sl.v1913_5 d L tab k r g1 g2 hR hin) hc16) = AccMath.accVec (rowF fl tab (wL L).val (2 * t1.val + 1) (2 * k.val + 1)) (offF fl (wL L).val (2 * t1.val + 1) (2 * k.val + 1)) 3 39 :=
      acc_step d L fl tab (wL L).val (2 * t1.val + 1) (2 * k.val + 1) 1 _ hRB ⟨38, by decide⟩ ⟨3, by decide⟩ _ rfl _ hw_v1883_5 _ (k1_off99_form ..) _ hc16
    have s_B3_39 : addf (AccMath.accVec (rowF fl tab (wL L).val (2 * t1.val + 1) (2 * k.val + 1)) (offF fl (wL L).val (2 * t1.val + 1) (2 * k.val + 1)) 3 39) (shapeCast S16 (pair1_last.sl.v1949_5 d L tab k r g1 g2 hR hin) hc16) = AccMath.accVec (rowF fl tab (wL L).val (2 * t1.val + 1) (2 * k.val + 1)) (offF fl (wL L).val (2 * t1.val + 1) (2 * k.val + 1)) 3 40 :=
      acc_step d L fl tab (wL L).val (2 * t1.val + 1) (2 * k.val + 1) 1 _ hRB ⟨39, by decide⟩ ⟨3, by decide⟩ _ rfl _ hw_v1919_5 _ (k1_off100_form ..) _ hc16
    have s_B3_40 : addf (AccMath.accVec (rowF fl tab (wL L).val (2 * t1.val + 1) (2 * k.val + 1)) (offF fl (wL L).val (2 * t1.val + 1) (2 * k.val + 1)) 3 40) (shapeCast S16 (pair1_last.sl.v1985_5 d L tab k r g1 g2 hR hin) hc16) = AccMath.accVec (rowF fl tab (wL L).val (2 * t1.val + 1) (2 * k.val + 1)) (offF fl (wL L).val (2 * t1.val + 1) (2 * k.val + 1)) 3 41 :=
      acc_step d L fl tab (wL L).val (2 * t1.val + 1) (2 * k.val + 1) 1 _ hRB ⟨40, by decide⟩ ⟨3, by decide⟩ _ rfl _ hw_v1955_5 _ (k1_off101_form ..) _ hc16
    have s_B3_41 : addf (AccMath.accVec (rowF fl tab (wL L).val (2 * t1.val + 1) (2 * k.val + 1)) (offF fl (wL L).val (2 * t1.val + 1) (2 * k.val + 1)) 3 41) (shapeCast S16 (pair1_last.sl.v2021_5 d L tab k r g1 g2 hR hin) hc16) = AccMath.accVec (rowF fl tab (wL L).val (2 * t1.val + 1) (2 * k.val + 1)) (offF fl (wL L).val (2 * t1.val + 1) (2 * k.val + 1)) 3 42 :=
      acc_step d L fl tab (wL L).val (2 * t1.val + 1) (2 * k.val + 1) 1 _ hRB ⟨41, by decide⟩ ⟨3, by decide⟩ _ rfl _ hw_v1991_5 _ (k1_off102_form ..) _ hc16
    have s_B3_42 : addf (AccMath.accVec (rowF fl tab (wL L).val (2 * t1.val + 1) (2 * k.val + 1)) (offF fl (wL L).val (2 * t1.val + 1) (2 * k.val + 1)) 3 42) (shapeCast S16 (pair1_last.sl.v2057_5 d L tab k r g1 g2 hR hin) hc16) = AccMath.accVec (rowF fl tab (wL L).val (2 * t1.val + 1) (2 * k.val + 1)) (offF fl (wL L).val (2 * t1.val + 1) (2 * k.val + 1)) 3 43 :=
      acc_step d L fl tab (wL L).val (2 * t1.val + 1) (2 * k.val + 1) 1 _ hRB ⟨42, by decide⟩ ⟨3, by decide⟩ _ rfl _ hw_v2027_5 _ (k1_off103_form ..) _ hc16
    have s_B3_43 : addf (AccMath.accVec (rowF fl tab (wL L).val (2 * t1.val + 1) (2 * k.val + 1)) (offF fl (wL L).val (2 * t1.val + 1) (2 * k.val + 1)) 3 43) (shapeCast S16 (pair1_last.sl.v2093_5 d L tab k r g1 g2 hR hin) hc16) = AccMath.accVec (rowF fl tab (wL L).val (2 * t1.val + 1) (2 * k.val + 1)) (offF fl (wL L).val (2 * t1.val + 1) (2 * k.val + 1)) 3 44 :=
      acc_step d L fl tab (wL L).val (2 * t1.val + 1) (2 * k.val + 1) 1 _ hRB ⟨43, by decide⟩ ⟨3, by decide⟩ _ rfl _ hw_v2063_5 _ (k1_off104_form ..) _ hc16
    have s_B3_44 : addf (AccMath.accVec (rowF fl tab (wL L).val (2 * t1.val + 1) (2 * k.val + 1)) (offF fl (wL L).val (2 * t1.val + 1) (2 * k.val + 1)) 3 44) (shapeCast S16 (pair1_last.sl.v2129_5 d L tab k r g1 g2 hR hin) hc16) = AccMath.accVec (rowF fl tab (wL L).val (2 * t1.val + 1) (2 * k.val + 1)) (offF fl (wL L).val (2 * t1.val + 1) (2 * k.val + 1)) 3 45 :=
      acc_step d L fl tab (wL L).val (2 * t1.val + 1) (2 * k.val + 1) 1 _ hRB ⟨44, by decide⟩ ⟨3, by decide⟩ _ rfl _ hw_v2099_5 _ (k1_off105_form ..) _ hc16
    have s_B3_45 : addf (AccMath.accVec (rowF fl tab (wL L).val (2 * t1.val + 1) (2 * k.val + 1)) (offF fl (wL L).val (2 * t1.val + 1) (2 * k.val + 1)) 3 45) (shapeCast S16 (pair1_last.sl.v2165_5 d L tab k r g1 g2 hR hin) hc16) = AccMath.accVec (rowF fl tab (wL L).val (2 * t1.val + 1) (2 * k.val + 1)) (offF fl (wL L).val (2 * t1.val + 1) (2 * k.val + 1)) 3 46 :=
      acc_step d L fl tab (wL L).val (2 * t1.val + 1) (2 * k.val + 1) 1 _ hRB ⟨45, by decide⟩ ⟨3, by decide⟩ _ rfl _ hw_v2135_5 _ (k1_off106_form ..) _ hc16
    have s_B3_46 : addf (AccMath.accVec (rowF fl tab (wL L).val (2 * t1.val + 1) (2 * k.val + 1)) (offF fl (wL L).val (2 * t1.val + 1) (2 * k.val + 1)) 3 46) (shapeCast S16 (pair1_last.sl.v2201_5 d L tab k r g1 g2 hR hin) hc16) = AccMath.accVec (rowF fl tab (wL L).val (2 * t1.val + 1) (2 * k.val + 1)) (offF fl (wL L).val (2 * t1.val + 1) (2 * k.val + 1)) 3 47 :=
      acc_step d L fl tab (wL L).val (2 * t1.val + 1) (2 * k.val + 1) 1 _ hRB ⟨46, by decide⟩ ⟨3, by decide⟩ _ rfl _ hw_v2171_5 _ (k1_off107_form ..) _ hc16
    have s_B3_47 : addf (AccMath.accVec (rowF fl tab (wL L).val (2 * t1.val + 1) (2 * k.val + 1)) (offF fl (wL L).val (2 * t1.val + 1) (2 * k.val + 1)) 3 47) (shapeCast S16 (pair1_last.sl.v2237_5 d L tab k r g1 g2 hR hin) hc16) = AccMath.accVec (rowF fl tab (wL L).val (2 * t1.val + 1) (2 * k.val + 1)) (offF fl (wL L).val (2 * t1.val + 1) (2 * k.val + 1)) 3 48 :=
      acc_step d L fl tab (wL L).val (2 * t1.val + 1) (2 * k.val + 1) 1 _ hRB ⟨47, by decide⟩ ⟨3, by decide⟩ _ rfl _ hw_v2207_5 _ (k1_off108_form ..) _ hc16
    have s_B3_48 : addf (AccMath.accVec (rowF fl tab (wL L).val (2 * t1.val + 1) (2 * k.val + 1)) (offF fl (wL L).val (2 * t1.val + 1) (2 * k.val + 1)) 3 48) (shapeCast S16 (pair1_last.sl.v1602 d L tab k r g1 g2 hR hin) hc16) = AccMath.accVec (rowF fl tab (wL L).val (2 * t1.val + 1) (2 * k.val + 1)) (offF fl (wL L).val (2 * t1.val + 1) (2 * k.val + 1)) 3 49 :=
      acc_step d L fl tab (wL L).val (2 * t1.val + 1) (2 * k.val + 1) 1 _ hRB ⟨48, by decide⟩ ⟨3, by decide⟩ _ rfl _ hw_v1572 _ (k1_off110_form ..) _ hc16
    have s_B3_49 : addf (AccMath.accVec (rowF fl tab (wL L).val (2 * t1.val + 1) (2 * k.val + 1)) (offF fl (wL L).val (2 * t1.val + 1) (2 * k.val + 1)) 3 49) (shapeCast S16 (pair1_last.sl.v1636 d L tab k r g1 g2 hR hin) hc16) = AccMath.accVec (rowF fl tab (wL L).val (2 * t1.val + 1) (2 * k.val + 1)) (offF fl (wL L).val (2 * t1.val + 1) (2 * k.val + 1)) 3 50 :=
      acc_step d L fl tab (wL L).val (2 * t1.val + 1) (2 * k.val + 1) 1 _ hRB ⟨49, by decide⟩ ⟨3, by decide⟩ _ rfl _ hw_v1606 _ (k1_off111_form ..) _ hc16
    have hP_B3 : ∀ x : S1x1x16.Idx, shapeCast S1x1x16 (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (AccMath.accVec (rowF fl tab (wL L).val (2 * t1.val + 1) (2 * k.val + 1)) (offF fl (wL L).val (2 * t1.val + 1) (2 * k.val + 1)) 3 0) (shapeCast S16 (pair1_last.sl.v1697_3 d L tab k r g1 g2 hR hin) hc16)) (shapeCast S16 (pair1_last.sl.v1733_3 d L tab k r g1 g2 hR hin) hc16)) (shapeCast S16 (pair1_last.sl.v1769_3 d L tab k r g1 g2 hR hin) hc16)) (shapeCast S16 (pair1_last.sl.v1805_3 d L tab k r g1 g2 hR hin) hc16)) (shapeCast S16 (pair1_last.sl.v1841_3 d L tab k r g1 g2 hR hin) hc16)) (shapeCast S16 (pair1_last.sl.v1877_3 d L tab k r g1 g2 hR hin) hc16)) (shapeCast S16 (pair1_last.sl.v1913_3 d L tab k r g1 g2 hR hin) hc16)) (shapeCast S16 (pair1_last.sl.v1949_3 d L tab k r g1 g2 hR hin) hc16)) (shapeCast S16 (pair1_last.sl.v1985_3 d L tab k r g1 g2 hR hin) hc16)) (shapeCast S16 (pair1_last.sl.v2021_3 d L tab k r g1 g2 hR hin) hc16)) (shapeCast S16 (pair1_last.sl.v2057_3 d L tab k r g1 g2 hR hin) hc16)) (shapeCast S16 (pair1_last.sl.v2093_3 d L tab k r g1 g2 hR hin) hc16)) (shapeCast S16 (pair1_last.sl.v2129_3 d L tab k r g1 g2 hR hin) hc16)) (shapeCast S16 (pair1_last.sl.v2165_3 d L tab k r g1 g2 hR hin) hc16)) (shapeCast S16 (pair1_last.sl.v2201_3 d L tab k r g1 g2 hR hin) hc16)) (shapeCast S16 (pair1_last.sl.v2237_3 d L tab k r g1 g2 hR hin) hc16)) (shapeCast S16 (pair1_last.sl.v1697_4 d L tab k r g1 g2 hR hin) hc16)) (shapeCast S16 (pair1_last.sl.v1733_4 d L tab k r g1 g2 hR hin) hc16)) (shapeCast S16 (pair1_last.sl.v1769_4 d L tab k r g1 g2 hR hin) hc16)) (shapeCast S16 (pair1_last.sl.v1805_4 d L tab k r g1 g2 hR hin) hc16)) (shapeCast S16 (pair1_last.sl.v1841_4 d L tab k r g1 g2 hR hin) hc16)) (shapeCast S16 (pair1_last.sl.v1877_4 d L tab k r g1 g2 hR hin) hc16)) (shapeCast S16 (pair1_last.sl.v1913_4 d L tab k r g1 g2 hR hin) hc16)) (shapeCast S16 (pair1_last.sl.v1949_4 d L tab k r g1 g2 hR hin) hc16)) (shapeCast S16 (pair1_last.sl.v1985_4 d L tab k r g1 g2 hR hin) hc16)) (shapeCast S16 (pair1_last.sl.v2021_4 d L tab k r g1 g2 hR hin) hc16)) (shapeCast S16 (pair1_last.sl.v2057_4 d L tab k r g1 g2 hR hin) hc16)) (shapeCast S16 (pair1_last.sl.v2093_4 d L tab k r g1 g2 hR hin) hc16)) (shapeCast S16 (pair1_last.sl.v2129_4 d L tab k r g1 g2 hR hin) hc16)) (shapeCast S16 (pair1_last.sl.v2165_4 d L tab k r g1 g2 hR hin) hc16)) (shapeCast S16 (pair1_last.sl.v2201_4 d L tab k r g1 g2 hR hin) hc16)) (shapeCast S16 (pair1_last.sl.v2237_4 d L tab k r g1 g2 hR hin) hc16)) (shapeCast S16 (pair1_last.sl.v1697_5 d L tab k r g1 g2 hR hin) hc16)) (shapeCast S16 (pair1_last.sl.v1733_5 d L tab k r g1 g2 hR hin) hc16)) (shapeCast S16 (pair1_last.sl.v1769_5 d L tab k r g1 g2 hR hin) hc16)) (shapeCast S16 (pair1_last.sl.v1805_5 d L tab k r g1 g2 hR hin) hc16)) (shapeCast S16 (pair1_last.sl.v1841_5 d L tab k r g1 g2 hR hin) hc16)) (shapeCast S16 (pair1_last.sl.v1877_5 d L tab k r g1 g2 hR hin) hc16)) (shapeCast S16 (pair1_last.sl.v1913_5 d L tab k r g1 g2 hR hin) hc16)) (shapeCast S16 (pair1_last.sl.v1949_5 d L tab k r g1 g2 hR hin) hc16)) (shapeCast S16 (pair1_last.sl.v1985_5 d L tab k r g1 g2 hR hin) hc16)) (shapeCast S16 (pair1_last.sl.v2021_5 d L tab k r g1 g2 hR hin) hc16)) (shapeCast S16 (pair1_last.sl.v2057_5 d L tab k r g1 g2 hR hin) hc16)) (shapeCast S16 (pair1_last.sl.v2093_5 d L tab k r g1 g2 hR hin) hc16)) (shapeCast S16 (pair1_last.sl.v2129_5 d L tab k r g1 g2 hR hin) hc16)) (shapeCast S16 (pair1_last.sl.v2165_5 d L tab k r g1 g2 hR hin) hc16)) (shapeCast S16 (pair1_last.sl.v2201_5 d L tab k r g1 g2 hR hin) hc16)) (shapeCast S16 (pair1_last.sl.v2237_5 d L tab k r g1 g2 hR hin) hc16)) (shapeCast S16 (pair1_last.sl.v1602 d L tab k r g1 g2 hR hin) hc16)) (shapeCast S16 (pair1_last.sl.v1636 d L tab k r g1 g2 hR hin) hc16)) hc1 x = Spec.bagPartial fl tab (128 * (wL L).val + 16 * (2 * t1.val + 1) + (2 * k.val + 1)) (16 * 3 + (x 2).val) 50 := fun x => by
      rw [s_B3_0, s_B3_1, s_B3_2, s_B3_3, s_B3_4, s_B3_5, s_B3_6, s_B3_7, s_B3_8, s_B3_9, s_B3_10, s_B3_11, s_B3_12, s_B3_13, s_B3_14, s_B3_15, s_B3_16, s_B3_17, s_B3_18, s_B3_19, s_B3_20, s_B3_21, s_B3_22, s_B3_23, s_B3_24, s_B3_25, s_B3_26, s_B3_27, s_B3_28, s_B3_29, s_B3_30, s_B3_31, s_B3_32, s_B3_33, s_B3_34, s_B3_35, s_B3_36, s_B3_37, s_B3_38, s_B3_39, s_B3_40, s_B3_41, s_B3_42, s_B3_43, s_B3_44, s_B3_45, s_B3_46, s_B3_47, s_B3_48, s_B3_49]
      exact payload_ok fl tab (wL L).val (2 * t1.val + 1) (2 * k.val + 1) ⟨3, by decide⟩ hc1 x
    have hK0 := (WbV_iff_WbK d L fl tab (wL L).val (2 * t1.val + 1) 1 (2 * k.val) wb).mp hwb
    have kA := WbK_bag d L fl tab (wL L).val (2 * t1.val + 1) 1 _ wb hK0 ⟨2 * k.val, by omega⟩ (k1_off85 k) (k1_off86 k) (k1_off87 k) (k1_off88 k)
      (k1_off85_eq k) (k1_off86_eq k) (k1_off87_eq k) (k1_off88_eq k) (k1_off85_inb k) (k1_off86_inb k) (k1_off87_inb k) (k1_off88_inb k) _ _ _ _
      hP_A0 hP_A1 hP_A2 hP_A3
    have kB := WbK_bag d L fl tab (wL L).val (2 * t1.val + 1) 1 _ _ kA ⟨2 * k.val + 1, by omega⟩ (k1_off112 k) (k1_off113 k) (k1_off114 k) (k1_off115 k)
      (k1_off112_eq k) (k1_off113_eq k) (k1_off114_eq k) (k1_off115_eq k) (k1_off112_inb k) (k1_off113_inb k) (k1_off114_inb k) (k1_off115_inb k) _ _ _ _
      hP_B0 hP_B1 hP_B2 hP_B3
    rw [WbV_iff_WbK]
    intro g c hg
    have hg2 : g.val < 2 * 8 := hg
    refine kB g c ?_
    have hg' : g.val < 2 * k.val ∨ g.val = 2 * k.val ∨ g.val = 2 * k.val + 1 := by omega
    rcases hg' with h | h | h
    · exact .inl (.inl h)
    · exact .inl (.inr (Fin.ext h))
    · exact .inr (Fin.ext h)

end Tile

end Cert.Proof.BagB
end
-- ==== Proof.TilePair1B.lean ====
/-
  One trip of an odd block's pair loop on a vector subcore, whatever the trip and the block: from what holds before trip `k`
  to what holds before trip `k + 1`, by cases — a trip before the last, the last trip of a block that has a successor, the
  last trip of the task's last block.
-/
import proofs.«203835_g19404662243951_cont_8to1_399_35_alg».proof.Proof.TilePreB
import proofs.«203835_g19404662243951_cont_8to1_399_35_alg».proof.Proof.PayB
import proofs.«203835_g19404662243951_cont_8to1_399_35_alg».proof.Proof.TileChkB
import proofs.«203835_g19404662243951_cont_8to1_399_35_alg».proof.Proof.TileMath
import proofs.«203835_g19404662243951_cont_8to1_399_35_alg».proof.Proof.TileInvB
import proofs.«203835_g19404662243951_cont_8to1_399_35_alg».proof.Proof.TileInv1B
import proofs.«203835_g19404662243951_cont_8to1_399_35_alg».proof.Proof.Gen.Kernel.Skeleton
import proofs.«203835_g19404662243951_cont_8to1_399_35_alg».proof.Proof.TilePairValB
import proofs.«203835_g19404662243951_cont_8to1_399_35_alg».proof.Proof.TilePair1aB
import proofs.«203835_g19404662243951_cont_8to1_399_35_alg».proof.Proof.TilePair1bB
import proofs.«203835_g19404662243951_cont_8to1_399_35_alg».proof.Proof.TilePair1cB
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

theorem pair1_region (fl : IVec Spec.SFlat 32) (qt : PosShare TreeShare) (tab : FVec F Spec.STab .f32) (O : CellTallies nD τ sig (HIx 1))
    (W0 : Waits sig (HIx 1)) (t1 : Fin k1_t1_loop.trips) (v1407 : BitVec 32) (k : Fin k1_t5_loop.trips) :
    inv1 d L fl qt tab O W0 (2 * t1.val + 1) k.val ⟨⟩
      ⊢ wp frame (wpE (defs₀ (F := F)) 𝒱₀ (thr d L) none) Set.univ
          (k1_t5_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10 t1 v1407 k ⟨⟩)
          (inv1 d L fl qt tab O W0 (2 * t1.val + 1) (k.val + 1)) := by
  have h8 : k.val < 8 := lt_of_lt_of_eq k.isLt trips5
  rw [inv1_flight d L fl qt tab O W0 (2 * t1.val + 1) k.val (Or.inl h8)]
  by_cases hk : k.val < 7
  · rw [inv1_flight d L fl qt tab O W0 (2 * t1.val + 1) (k.val + 1) (Or.inl (by omega))]
    exact pair1_lt d L fl qt tab O W0 t1 v1407 k hk
  · by_cases ht : t1.val < 3
    · rw [inv1_flight d L fl qt tab O W0 (2 * t1.val + 1) (k.val + 1) (Or.inr (by omega))]
      exact pair1_next d L fl qt tab O W0 t1 v1407 k hk ht
    · rw [inv1_last d L fl qt tab O W0 (2 * t1.val + 1) (k.val + 1) (by omega)]
      exact pair1_last d L fl qt tab O W0 t1 v1407 k hk ht

end Tile

end Cert.Proof.BagB
end
-- ==== Proof.TileMainB.lean ====
/-
  The bag-sum kernel's body on one vector subcore, from what the task is handed to what it hands back.
-/
import proofs.«203835_g19404662243951_cont_8to1_399_35_alg».proof.Proof.TilePreB
import proofs.«203835_g19404662243951_cont_8to1_399_35_alg».proof.Proof.PayB
import proofs.«203835_g19404662243951_cont_8to1_399_35_alg».proof.Proof.TileChkB
import proofs.«203835_g19404662243951_cont_8to1_399_35_alg».proof.Proof.TileMath
import proofs.«203835_g19404662243951_cont_8to1_399_35_alg».proof.Proof.TileOutB
import proofs.«203835_g19404662243951_cont_8to1_399_35_alg».proof.Proof.TileInvB
import proofs.«203835_g19404662243951_cont_8to1_399_35_alg».proof.Proof.TileInv1B
import proofs.«203835_g19404662243951_cont_8to1_399_35_alg».proof.Proof.TileSlotsB
import proofs.«203835_g19404662243951_cont_8to1_399_35_alg».proof.Proof.TileLandB
import proofs.«203835_g19404662243951_cont_8to1_399_35_alg».proof.Proof.TileGlueB
import proofs.«203835_g19404662243951_cont_8to1_399_35_alg».proof.Proof.TileInitB
import proofs.«203835_g19404662243951_cont_8to1_399_35_alg».proof.Proof.TileConvSiteB
import proofs.«203835_g19404662243951_cont_8to1_399_35_alg».proof.Proof.TileListB
import proofs.«203835_g19404662243951_cont_8to1_399_35_alg».proof.Proof.TilePair0B
import proofs.«203835_g19404662243951_cont_8to1_399_35_alg».proof.Proof.TilePair1B
import proofs.«203835_g19404662243951_cont_8to1_399_35_alg».proof.Proof.Gen.Kernel.Skeleton
import Idealize.ShloMosaic.Lib.Tactic

noncomputable section

namespace Cert.Proof.BagB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Lean Elab Tactic Meta in
/-- Reads the printed check at the head of the goal off its name and applies that check's lemma, leaving the word's fact. -/
elab "chk_disch" : tactic => withMainContext do
  let g ← getMainGoal
  let t ← instantiateMVars (← g.getType)
  let .const n _ := t.getAppFn | throwError "chk_disch: not a check"
  let .str _ last := n | throwError "chk_disch: not a check"
  unless last.startsWith "k1_chk" do throwError "chk_disch: not a check"
  let idx := last.drop 6
  let lem : Name := `Cert.Proof.TileChkB ++ Name.mkSimple ("chk" ++ idx)
  evalTactic (← `(tactic| first | (refine $(mkIdent lem) ?_) | (refine $(mkIdent lem) _ ?_)))

open Lean Elab Tactic Meta in
/-- With the goal `T d L fl w b h (View.writes v Val g Lc)` — a fact of a scratch's contents after a list of stores —, adds the
    named lemma applied to the goal's own buffer, list and numbers as the hypothesis `key`. -/
elab "have_conv " n:ident : tactic => withMainContext do
  let g ← getMainGoal
  let t ← instantiateMVars (← g.getType)
  let args := t.getAppArgs
  let sz := args.size
  let wa := (args[sz - 1]!).getAppArgs
  let c ← realizeGlobalConstNoOverloadWithInfo n
  let e ← mkAppM c #[args[sz - 7]!, args[sz - 6]!, args[sz - 5]!, wa[wa.size - 2]!, wa[wa.size - 1]!, args[sz - 4]!, args[sz - 3]!, args[sz - 2]!]
  let g' ← g.assert `key (← inferType e) e
  let (_, g'') ← g'.intro1P
  replaceMainGoal [g'']

open Lean Elab Tactic Meta in
/-- With the goal `A ∧ B ∧ Po ∧ E d L fl tab b k r (View.writes … g1 L1) (View.writes … g2 L2) wb` — a pair loop's entry facts —,
    adds the named lemma applied to the goal's own buffers, lists, block number and `Po` as the hypothesis `key`. -/
elab "have_entry " n:ident : tactic => withMainContext do
  let g ← getMainGoal
  let t ← instantiateMVars (← g.getType)
  let t ← whnfR t
  let some (_, r1) := t.consumeMData.and? | throwError "have_entry: not a conjunction (1): {t}"
  let r1 ← whnfR r1
  let some (_, r2) := r1.consumeMData.and? | throwError "have_entry: not a conjunction (2): {r1}"
  let r2 ← whnfR r2
  let some (Po, E) := r2.consumeMData.and? | throwError "have_entry: not a conjunction (3): {r2}"
  let E := E.consumeMData
  let a := E.getAppArgs
  let sz := a.size
  let w1 := (a[sz - 3]!).getAppArgs
  let w2 := (a[sz - 2]!).getAppArgs
  let c ← realizeGlobalConstNoOverloadWithInfo n
  let e ← mkAppM c #[a[sz - 10]!, a[sz - 9]!, a[sz - 8]!, a[sz - 7]!, a[sz - 6]!, Po, a[sz - 4]!, w1[w1.size - 2]!, w2[w2.size - 2]!, a[sz - 1]!, w1[w1.size - 1]!, w2[w2.size - 1]!]
  let g' ← g.assert `key (← inferType e) e
  let (_, g'') ← g'.intro1P
  replaceMainGoal [g'']

variable {F : FTy → Type} [FloatOps F]

local notation "𝕄" => MT nD τ sig (HIx 1) (Elt F) ℕ UU ℕ

section Tile

variable (d : Dev nD) (L : grid1.Coords)

theorem slot1_sub : (slot1M).view.set ⊆ (Finset.univ : Finset (Idx ((sWb : Memref sig .scVector .vmem S2x16x64 .f32).view.loc (thr d L)))) := Finset.subset_univ _

abbrev T0 : Fin k1_t1_loop.trips := ⟨0, by decide⟩
abbrev T1 : Fin k1_t1_loop.trips := ⟨1, by decide⟩
abbrev T2 : Fin k1_t1_loop.trips := ⟨2, by decide⟩
abbrev T3 : Fin k1_t1_loop.trips := ⟨3, by decide⟩

omit [FloatOps F] in
theorem pts_blk0 (n : Fin 8) (t : Fin k1_t1_loop.trips) (h : n = ⟨2 * t.val, two_mul_lt t⟩) (f : Buf (Elt F) (oLoc d)) :
    ((oBlkM0 L t).view.loc (thr d L) ↦[(oBlkM0 L t).view.set]{fullShare} f : sProp 𝕄) = oLoc d ↦[blockSet (blkNo (wL L) n)]{fullShare} f := by
  subst h; exact pts_oBlkM0 d L t f
omit [FloatOps F] in
theorem pts_blk1 (n : Fin 8) (t : Fin k1_t1_loop.trips) (h : n = ⟨2 * t.val + 1, two_mul_succ_lt t⟩) (f : Buf (Elt F) (oLoc d)) :
    ((oBlkM1 L t).view.loc (thr d L) ↦[(oBlkM1 L t).view.set]{fullShare} f : sProp 𝕄) = oLoc d ↦[blockSet (blkNo (wL L) n)]{fullShare} f := by
  subst h; exact pts_oBlkM1 d L t f

omit [FloatOps F] in
theorem wb_join1 (fa fr : Buf (Elt F) ((sWb : Memref sig .scVector .vmem S2x16x64 .f32).view.loc (thr d L))) :
    iprop(((sWb : Memref sig .scVector .vmem S2x16x64 .f32).view.loc (thr d L) ↦[(slot1M).view.set]{fullShare} fa)
        ∗ ((sWb : Memref sig .scVector .vmem S2x16x64 .f32).view.loc (thr d L) ↦[Finset.univ \ (slot1M).view.set]{fullShare} fr))
      ⊢ ((sWb : Memref sig .scVector .vmem S2x16x64 .f32).view.loc (thr d L) ↦{fullShare} ((slot1M).view.set.piecewise fa fr) : sProp 𝕄) :=
  pointsTo_join_subset (slot1_sub d L)
omit [FloatOps F] in
theorem wb_split1 (f : Buf (Elt F) ((sWb : Memref sig .scVector .vmem S2x16x64 .f32).view.loc (thr d L))) :
    ((sWb : Memref sig .scVector .vmem S2x16x64 .f32).view.loc (thr d L) ↦{fullShare} f : sProp 𝕄)
      ⊢ iprop(((sWb : Memref sig .scVector .vmem S2x16x64 .f32).view.loc (thr d L) ↦[(slot1M).view.set]{fullShare} f)
        ∗ ((sWb : Memref sig .scVector .vmem S2x16x64 .f32).view.loc (thr d L) ↦[Finset.univ \ (slot1M).view.set]{fullShare} f)) :=
  (pointsTo_split_subset (slot1_sub d L)).1

omit [FloatOps F] in
theorem wb_join0 (fa fr : Buf (Elt F) ((sWb : Memref sig .scVector .vmem S2x16x64 .f32).view.loc (thr d L))) :
    iprop(((sWb : Memref sig .scVector .vmem S2x16x64 .f32).view.loc (thr d L) ↦[(slot0M).view.set]{fullShare} fa)
        ∗ ((sWb : Memref sig .scVector .vmem S2x16x64 .f32).view.loc (thr d L) ↦[Finset.univ \ (slot0M).view.set]{fullShare} fr))
      ⊢ ((sWb : Memref sig .scVector .vmem S2x16x64 .f32).view.loc (thr d L) ↦{fullShare} ((slot0M).view.set.piecewise fa fr) : sProp 𝕄) :=
  pointsTo_join_subset (Finset.subset_univ _)

omit [FloatOps F] d L in
/-- A buffer's contents, named. -/
theorem pts_name {ℓ : Loc nD τ sig} {S : Finset (Idx ℓ)} {q : PosShare TreeShare} (g : Buf (Elt F) ℓ) :
    (ℓ ↦[S]{q} g : sProp 𝕄) ⊢ iprop(∃ g', ⌜g' = g⌝ ∗ (ℓ ↦[S]{q} g')) := by
  iintro H
  iexists g
  isplitr
  · ipureintro; rfl
  · iexact H

/-- A landed even block holds the bag sums (the landing's payload equation as a pure premise). -/
theorem out_vals0_i (fl : IVec Spec.SFlat 32) (tab : FVec F Spec.STab .f32) (t : Fin k1_t1_loop.trips) (fb : Buf (Elt F) (oLoc d))
    (wbc : Buf (Elt F) ((sWb : Memref sig .scVector .vmem S2x16x64 .f32).view.loc (thr d L)))
    (pay : (Rect.whole S16x64).shape.Idx → Elt F .f32) (hW : WbV d L fl tab (wL L).val (2 * t.val) 0 16 wbc) :
    iprop(⌜pay = (slot0M).view.read (Elt F) wbc⌝
        ∗ ((oBlkM0 L t).view.loc (thr d L) ↦[(oBlkM0 L t).view.set]{fullShare} (oBlkM0 L t).view.writes (Elt F) fb [⟨Rect.whole S16x64, pay⟩]))
      ⊢ (oLoc d ↦[blockSet (blkNo (wL L) ⟨2 * t.val, two_mul_lt t⟩)]{fullShare} (Spec.bagSums fl tab) : sProp 𝕄) := by
  iintro ⟨%h, H⟩
  iapply (Entails.of_eq (out_vals0 (F := F) d L fl tab t fb wbc pay h hW))
  iexact H
/-- A landed odd block holds the bag sums. -/
theorem out_vals1_i (fl : IVec Spec.SFlat 32) (tab : FVec F Spec.STab .f32) (t : Fin k1_t1_loop.trips) (fb : Buf (Elt F) (oLoc d))
    (wbc : Buf (Elt F) ((sWb : Memref sig .scVector .vmem S2x16x64 .f32).view.loc (thr d L)))
    (pay : (Rect.whole S16x64).shape.Idx → Elt F .f32) (hW : WbV d L fl tab (wL L).val (2 * t.val + 1) 1 16 wbc) :
    iprop(⌜pay = (slot1M).view.read (Elt F) wbc⌝
        ∗ ((oBlkM1 L t).view.loc (thr d L) ↦[(oBlkM1 L t).view.set]{fullShare} (oBlkM1 L t).view.writes (Elt F) fb [⟨Rect.whole S16x64, pay⟩]))
      ⊢ (oLoc d ↦[blockSet (blkNo (wL L) ⟨2 * t.val + 1, two_mul_succ_lt t⟩)]{fullShare} (Spec.bagSums fl tab) : sProp 𝕄) := by
  iintro ⟨%h, H⟩
  iapply (Entails.of_eq (out_vals1 (F := F) d L fl tab t fb wbc pay h hW))
  iexact H

set_option maxHeartbeats 4000000 in
theorem tile_body (hF : (K (F := F)).Facts) (PK : FVec F Spec.STab .f32 → Prop) (fl : IVec Spec.SFlat 32)
    (hfl : ∀ n, (fl n).toNat ≤ 999999) (qi qt : PosShare TreeShare)
    (O : CellTallies nD τ sig (HIx 1)) (W : Waits sig (HIx 1)) (hO : ∀ g, O g none = 0) :
    iprop(levAts (K (F := F)).L (K (F := F)).lev ∗ emp ∗ goA PK fl qi qt d (wL L)
        ∗ scopedBufs (thr d L) ∗ scopedSems0 (thr d L) ∗ owes (thr d L) O W)
      ⊢ wp frame (wpE (defs₀ (F := F)) 𝒱₀ (thr d L) none) Set.univ
          (cc1__sc_bag_sum_body L iV (Memref.isWhole_whole _) tV (Memref.isWhole_whole _) oV (Memref.isWhole_whole _)
            sIdx (Memref.isWhole_whole _) sTix (Memref.isWhole_whole _) sRv (Memref.isWhole_whole _)
            sRows (Memref.isWhole_whole _) sWb (Memref.isWhole_whole _)
            cc1_scratch5 cc1_scratch6 cc1_scratch7 cc1_scratch8 cc1_scratch9 cc1_scratch10)
          fun _ => iprop(tdA PK fl qi qt d (wL L) ∗ scopedBufs (thr d L) ∗ scopedSems0 (thr d L)
            ∗ ∃ W', ⌜∀ p ∈ W', p ∈ W ∨ p.2 = none⌝ ∗ owes (thr d L) O W') := by
  simp only [cc1__sc_bag_sum_body_eq_skeleton]; unfold cc1__sc_bag_sum_body_skel
  rw [(K (F := F)).scopedBufs_V hF d (cV L) (jV L), SparseCore.Cfg.scopedSems0_V (Val := Elt F) d (cV L) (jV L), ownSems0_V', ownBufs_V]
  unfold goA
  iintro ⟨#Hlv, -, ⟨Hi, ⟨%tab, %hPK, Ht⟩, Hblk⟩, ⟨⟨⟨%f0, H0⟩, ⟨%f1, H1⟩, ⟨%f2, H2⟩, ⟨%f3, H3⟩, ⟨%f4, H4⟩⟩, Hbufs⟩, ⟨⟨Hg0, Hg1, Hi0, Hi1, Hw0, Hw1⟩, Hsems⟩, HO⟩
  ihave Hmw := ((K (F := F)).mayWaits_none (thr := thr d L) hO) $$ Hlv
  ihave Hi' := (Entails.of_eq (pts_iV (F := F) d L qi _).symm) $$ Hi
  ihave Ht' := (Entails.of_eq (pts_tV (F := F) d L qt _).symm) $$ Ht
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  ihave Hb := (Entails.of_eq (bigSep_fin8 (F := F) _)) $$ Hblk
  icases Hb with ⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩⟩
  ihave Hb0' := (Entails.of_eq (pts_blk0 (F := F) d L 0 T0 rfl fb0).symm) $$ Hb0
  ihave Hb1' := (Entails.of_eq (pts_blk1 (F := F) d L 1 T0 rfl fb1).symm) $$ Hb1
  ihave Hb2' := (Entails.of_eq (pts_blk0 (F := F) d L 2 T1 rfl fb2).symm) $$ Hb2
  ihave Hb3' := (Entails.of_eq (pts_blk1 (F := F) d L 3 T1 rfl fb3).symm) $$ Hb3
  ihave Hb4' := (Entails.of_eq (pts_blk0 (F := F) d L 4 T2 rfl fb4).symm) $$ Hb4
  ihave Hb5' := (Entails.of_eq (pts_blk1 (F := F) d L 5 T2 rfl fb5).symm) $$ Hb5
  ihave Hb6' := (Entails.of_eq (pts_blk0 (F := F) d L 6 T3 rfl fb6).symm) $$ Hb6
  ihave Hb7' := (Entails.of_eq (pts_blk1 (F := F) d L 7 T3 rfl fb7).symm) $$ Hb7
  sl_exec_parts
  -- the prologue's conversion of block 0: the two scratches' contents named, with what they hold
  ihave H1x := (pts_name (F := F) _) $$ H1'
  icases H1x with ⟨%g1p, %hg1p, H1'⟩
  ihave H2x := (pts_name (F := F) _) $$ H2'
  icases H2x with ⟨%g2p, %hg2p, H2'⟩
  have hP : TixV d L fl (wL L).val 0 0 g1p ∧ RvV d L fl (wL L).val 0 0 g2p := by
    -- HOLE P: the prologue's sixty-four stores of block 0's row numbers and column offsets
    subst hg1p hg2p
    refine ⟨?_, ?_⟩
    · have_conv conv_TixV
      refine key ?_ (by rfl)
      refine View.forall_pieces_cons (fun x => step_trow (F := F) L fl _ 0 (by decide) (off1_0 L) _ 0 1008 inb_S2048_S1024_0 inb_S2048_S16_1008 _ (by decide) (by decide) _ _ x) ?_
      refine View.forall_pieces_cons (fun x => step_trow (F := F) L fl _ 0 (by decide) (off1_0 L) _ 0 992 inb_S2048_S1024_0 inb_S2048_S16_992 _ (by decide) (by decide) _ _ x) ?_
      refine View.forall_pieces_cons (fun x => step_trow (F := F) L fl _ 0 (by decide) (off1_0 L) _ 0 976 inb_S2048_S1024_0 inb_S2048_S16_976 _ (by decide) (by decide) _ _ x) ?_
      refine View.forall_pieces_cons (fun x => step_trow (F := F) L fl _ 0 (by decide) (off1_0 L) _ 0 960 inb_S2048_S1024_0 inb_S2048_S16_960 _ (by decide) (by decide) _ _ x) ?_
      refine View.forall_pieces_cons (fun x => step_trow (F := F) L fl _ 0 (by decide) (off1_0 L) _ 0 944 inb_S2048_S1024_0 inb_S2048_S16_944 _ (by decide) (by decide) _ _ x) ?_
      refine View.forall_pieces_cons (fun x => step_trow (F := F) L fl _ 0 (by decide) (off1_0 L) _ 0 928 inb_S2048_S1024_0 inb_S2048_S16_928 _ (by decide) (by decide) _ _ x) ?_
      refine View.forall_pieces_cons (fun x => step_trow (F := F) L fl _ 0 (by decide) (off1_0 L) _ 0 912 inb_S2048_S1024_0 inb_S2048_S16_912 _ (by decide) (by decide) _ _ x) ?_
      refine View.forall_pieces_cons (fun x => step_trow (F := F) L fl _ 0 (by decide) (off1_0 L) _ 0 896 inb_S2048_S1024_0 inb_S2048_S16_896 _ (by decide) (by decide) _ _ x) ?_
      refine View.forall_pieces_cons (fun x => step_trow (F := F) L fl _ 0 (by decide) (off1_0 L) _ 0 880 inb_S2048_S1024_0 inb_S2048_S16_880 _ (by decide) (by decide) _ _ x) ?_
      refine View.forall_pieces_cons (fun x => step_trow (F := F) L fl _ 0 (by decide) (off1_0 L) _ 0 864 inb_S2048_S1024_0 inb_S2048_S16_864 _ (by decide) (by decide) _ _ x) ?_
      refine View.forall_pieces_cons (fun x => step_trow (F := F) L fl _ 0 (by decide) (off1_0 L) _ 0 848 inb_S2048_S1024_0 inb_S2048_S16_848 _ (by decide) (by decide) _ _ x) ?_
      refine View.forall_pieces_cons (fun x => step_trow (F := F) L fl _ 0 (by decide) (off1_0 L) _ 0 832 inb_S2048_S1024_0 inb_S2048_S16_832 _ (by decide) (by decide) _ _ x) ?_
      refine View.forall_pieces_cons (fun x => step_trow (F := F) L fl _ 0 (by decide) (off1_0 L) _ 0 816 inb_S2048_S1024_0 inb_S2048_S16_816 _ (by decide) (by decide) _ _ x) ?_
      refine View.forall_pieces_cons (fun x => step_trow (F := F) L fl _ 0 (by decide) (off1_0 L) _ 0 800 inb_S2048_S1024_0 inb_S2048_S16_800 _ (by decide) (by decide) _ _ x) ?_
      refine View.forall_pieces_cons (fun x => step_trow (F := F) L fl _ 0 (by decide) (off1_0 L) _ 0 784 inb_S2048_S1024_0 inb_S2048_S16_784 _ (by decide) (by decide) _ _ x) ?_
      refine View.forall_pieces_cons (fun x => step_trow (F := F) L fl _ 0 (by decide) (off1_0 L) _ 0 768 inb_S2048_S1024_0 inb_S2048_S16_768 _ (by decide) (by decide) _ _ x) ?_
      refine View.forall_pieces_cons (fun x => step_trow (F := F) L fl _ 0 (by decide) (off1_0 L) _ 0 752 inb_S2048_S1024_0 inb_S2048_S16_752 _ (by decide) (by decide) _ _ x) ?_
      refine View.forall_pieces_cons (fun x => step_trow (F := F) L fl _ 0 (by decide) (off1_0 L) _ 0 736 inb_S2048_S1024_0 inb_S2048_S16_736 _ (by decide) (by decide) _ _ x) ?_
      refine View.forall_pieces_cons (fun x => step_trow (F := F) L fl _ 0 (by decide) (off1_0 L) _ 0 720 inb_S2048_S1024_0 inb_S2048_S16_720 _ (by decide) (by decide) _ _ x) ?_
      refine View.forall_pieces_cons (fun x => step_trow (F := F) L fl _ 0 (by decide) (off1_0 L) _ 0 704 inb_S2048_S1024_0 inb_S2048_S16_704 _ (by decide) (by decide) _ _ x) ?_
      refine View.forall_pieces_cons (fun x => step_trow (F := F) L fl _ 0 (by decide) (off1_0 L) _ 0 688 inb_S2048_S1024_0 inb_S2048_S16_688 _ (by decide) (by decide) _ _ x) ?_
      refine View.forall_pieces_cons (fun x => step_trow (F := F) L fl _ 0 (by decide) (off1_0 L) _ 0 672 inb_S2048_S1024_0 inb_S2048_S16_672 _ (by decide) (by decide) _ _ x) ?_
      refine View.forall_pieces_cons (fun x => step_trow (F := F) L fl _ 0 (by decide) (off1_0 L) _ 0 656 inb_S2048_S1024_0 inb_S2048_S16_656 _ (by decide) (by decide) _ _ x) ?_
      refine View.forall_pieces_cons (fun x => step_trow (F := F) L fl _ 0 (by decide) (off1_0 L) _ 0 640 inb_S2048_S1024_0 inb_S2048_S16_640 _ (by decide) (by decide) _ _ x) ?_
      refine View.forall_pieces_cons (fun x => step_trow (F := F) L fl _ 0 (by decide) (off1_0 L) _ 0 624 inb_S2048_S1024_0 inb_S2048_S16_624 _ (by decide) (by decide) _ _ x) ?_
      refine View.forall_pieces_cons (fun x => step_trow (F := F) L fl _ 0 (by decide) (off1_0 L) _ 0 608 inb_S2048_S1024_0 inb_S2048_S16_608 _ (by decide) (by decide) _ _ x) ?_
      refine View.forall_pieces_cons (fun x => step_trow (F := F) L fl _ 0 (by decide) (off1_0 L) _ 0 592 inb_S2048_S1024_0 inb_S2048_S16_592 _ (by decide) (by decide) _ _ x) ?_
      refine View.forall_pieces_cons (fun x => step_trow (F := F) L fl _ 0 (by decide) (off1_0 L) _ 0 576 inb_S2048_S1024_0 inb_S2048_S16_576 _ (by decide) (by decide) _ _ x) ?_
      refine View.forall_pieces_cons (fun x => step_trow (F := F) L fl _ 0 (by decide) (off1_0 L) _ 0 560 inb_S2048_S1024_0 inb_S2048_S16_560 _ (by decide) (by decide) _ _ x) ?_
      refine View.forall_pieces_cons (fun x => step_trow (F := F) L fl _ 0 (by decide) (off1_0 L) _ 0 544 inb_S2048_S1024_0 inb_S2048_S16_544 _ (by decide) (by decide) _ _ x) ?_
      refine View.forall_pieces_cons (fun x => step_trow (F := F) L fl _ 0 (by decide) (off1_0 L) _ 0 528 inb_S2048_S1024_0 inb_S2048_S16_528 _ (by decide) (by decide) _ _ x) ?_
      refine View.forall_pieces_cons (fun x => step_trow (F := F) L fl _ 0 (by decide) (off1_0 L) _ 0 512 inb_S2048_S1024_0 inb_S2048_S16_512 _ (by decide) (by decide) _ _ x) ?_
      refine View.forall_pieces_cons (fun x => step_trow (F := F) L fl _ 0 (by decide) (off1_0 L) _ 0 496 inb_S2048_S1024_0 inb_S2048_S16_496 _ (by decide) (by decide) _ _ x) ?_
      refine View.forall_pieces_cons (fun x => step_trow (F := F) L fl _ 0 (by decide) (off1_0 L) _ 0 480 inb_S2048_S1024_0 inb_S2048_S16_480 _ (by decide) (by decide) _ _ x) ?_
      refine View.forall_pieces_cons (fun x => step_trow (F := F) L fl _ 0 (by decide) (off1_0 L) _ 0 464 inb_S2048_S1024_0 inb_S2048_S16_464 _ (by decide) (by decide) _ _ x) ?_
      refine View.forall_pieces_cons (fun x => step_trow (F := F) L fl _ 0 (by decide) (off1_0 L) _ 0 448 inb_S2048_S1024_0 inb_S2048_S16_448 _ (by decide) (by decide) _ _ x) ?_
      refine View.forall_pieces_cons (fun x => step_trow (F := F) L fl _ 0 (by decide) (off1_0 L) _ 0 432 inb_S2048_S1024_0 inb_S2048_S16_432 _ (by decide) (by decide) _ _ x) ?_
      refine View.forall_pieces_cons (fun x => step_trow (F := F) L fl _ 0 (by decide) (off1_0 L) _ 0 416 inb_S2048_S1024_0 inb_S2048_S16_416 _ (by decide) (by decide) _ _ x) ?_
      refine View.forall_pieces_cons (fun x => step_trow (F := F) L fl _ 0 (by decide) (off1_0 L) _ 0 400 inb_S2048_S1024_0 inb_S2048_S16_400 _ (by decide) (by decide) _ _ x) ?_
      refine View.forall_pieces_cons (fun x => step_trow (F := F) L fl _ 0 (by decide) (off1_0 L) _ 0 384 inb_S2048_S1024_0 inb_S2048_S16_384 _ (by decide) (by decide) _ _ x) ?_
      refine View.forall_pieces_cons (fun x => step_trow (F := F) L fl _ 0 (by decide) (off1_0 L) _ 0 368 inb_S2048_S1024_0 inb_S2048_S16_368 _ (by decide) (by decide) _ _ x) ?_
      refine View.forall_pieces_cons (fun x => step_trow (F := F) L fl _ 0 (by decide) (off1_0 L) _ 0 352 inb_S2048_S1024_0 inb_S2048_S16_352 _ (by decide) (by decide) _ _ x) ?_
      refine View.forall_pieces_cons (fun x => step_trow (F := F) L fl _ 0 (by decide) (off1_0 L) _ 0 336 inb_S2048_S1024_0 inb_S2048_S16_336 _ (by decide) (by decide) _ _ x) ?_
      refine View.forall_pieces_cons (fun x => step_trow (F := F) L fl _ 0 (by decide) (off1_0 L) _ 0 320 inb_S2048_S1024_0 inb_S2048_S16_320 _ (by decide) (by decide) _ _ x) ?_
      refine View.forall_pieces_cons (fun x => step_trow (F := F) L fl _ 0 (by decide) (off1_0 L) _ 0 304 inb_S2048_S1024_0 inb_S2048_S16_304 _ (by decide) (by decide) _ _ x) ?_
      refine View.forall_pieces_cons (fun x => step_trow (F := F) L fl _ 0 (by decide) (off1_0 L) _ 0 288 inb_S2048_S1024_0 inb_S2048_S16_288 _ (by decide) (by decide) _ _ x) ?_
      refine View.forall_pieces_cons (fun x => step_trow (F := F) L fl _ 0 (by decide) (off1_0 L) _ 0 272 inb_S2048_S1024_0 inb_S2048_S16_272 _ (by decide) (by decide) _ _ x) ?_
      refine View.forall_pieces_cons (fun x => step_trow (F := F) L fl _ 0 (by decide) (off1_0 L) _ 0 256 inb_S2048_S1024_0 inb_S2048_S16_256 _ (by decide) (by decide) _ _ x) ?_
      refine View.forall_pieces_cons (fun x => step_trow (F := F) L fl _ 0 (by decide) (off1_0 L) _ 0 240 inb_S2048_S1024_0 inb_S2048_S16_240 _ (by decide) (by decide) _ _ x) ?_
      refine View.forall_pieces_cons (fun x => step_trow (F := F) L fl _ 0 (by decide) (off1_0 L) _ 0 224 inb_S2048_S1024_0 inb_S2048_S16_224 _ (by decide) (by decide) _ _ x) ?_
      refine View.forall_pieces_cons (fun x => step_trow (F := F) L fl _ 0 (by decide) (off1_0 L) _ 0 208 inb_S2048_S1024_0 inb_S2048_S16_208 _ (by decide) (by decide) _ _ x) ?_
      refine View.forall_pieces_cons (fun x => step_trow (F := F) L fl _ 0 (by decide) (off1_0 L) _ 0 192 inb_S2048_S1024_0 inb_S2048_S16_192 _ (by decide) (by decide) _ _ x) ?_
      refine View.forall_pieces_cons (fun x => step_trow (F := F) L fl _ 0 (by decide) (off1_0 L) _ 0 176 inb_S2048_S1024_0 inb_S2048_S16_176 _ (by decide) (by decide) _ _ x) ?_
      refine View.forall_pieces_cons (fun x => step_trow (F := F) L fl _ 0 (by decide) (off1_0 L) _ 0 160 inb_S2048_S1024_0 inb_S2048_S16_160 _ (by decide) (by decide) _ _ x) ?_
      refine View.forall_pieces_cons (fun x => step_trow (F := F) L fl _ 0 (by decide) (off1_0 L) _ 0 144 inb_S2048_S1024_0 inb_S2048_S16_144 _ (by decide) (by decide) _ _ x) ?_
      refine View.forall_pieces_cons (fun x => step_trow (F := F) L fl _ 0 (by decide) (off1_0 L) _ 0 128 inb_S2048_S1024_0 inb_S2048_S16_128 _ (by decide) (by decide) _ _ x) ?_
      refine View.forall_pieces_cons (fun x => step_trow (F := F) L fl _ 0 (by decide) (off1_0 L) _ 0 112 inb_S2048_S1024_0 inb_S2048_S16_112 _ (by decide) (by decide) _ _ x) ?_
      refine View.forall_pieces_cons (fun x => step_trow (F := F) L fl _ 0 (by decide) (off1_0 L) _ 0 96 inb_S2048_S1024_0 inb_S2048_S16_96 _ (by decide) (by decide) _ _ x) ?_
      refine View.forall_pieces_cons (fun x => step_trow (F := F) L fl _ 0 (by decide) (off1_0 L) _ 0 80 inb_S2048_S1024_0 inb_S2048_S16_80 _ (by decide) (by decide) _ _ x) ?_
      refine View.forall_pieces_cons (fun x => step_trow (F := F) L fl _ 0 (by decide) (off1_0 L) _ 0 64 inb_S2048_S1024_0 inb_S2048_S16_64 _ (by decide) (by decide) _ _ x) ?_
      refine View.forall_pieces_cons (fun x => step_trow (F := F) L fl _ 0 (by decide) (off1_0 L) _ 0 48 inb_S2048_S1024_0 inb_S2048_S16_48 _ (by decide) (by decide) _ _ x) ?_
      refine View.forall_pieces_cons (fun x => step_trow (F := F) L fl _ 0 (by decide) (off1_0 L) _ 0 32 inb_S2048_S1024_0 inb_S2048_S16_32 _ (by decide) (by decide) _ _ x) ?_
      refine View.forall_pieces_cons (fun x => step_trow (F := F) L fl _ 0 (by decide) (off1_0 L) _ 0 16 inb_S2048_S1024_0 inb_S2048_S16_16 _ (by decide) (by decide) _ _ x) ?_
      refine View.forall_pieces_cons (fun x => step_trow (F := F) L fl _ 0 (by decide) (off1_0 L) _ 0 0 inb_S2048_S1024_0 inb_S2048_S16_0 _ (by decide) (by decide) _ _ x) ?_
      exact View.forall_pieces_nil
    · have_conv conv_RvV
      refine key ?_ (by rfl)
      refine View.forall_pieces_cons (fun x => step_tcol (F := F) L fl _ 0 (by decide) (off1_0 L) _ 0 1008 inb_S2048_S1024_0 inb_S2048_S16_1008 _ (by decide) (by decide) _ _ x) ?_
      refine View.forall_pieces_cons (fun x => step_tcol (F := F) L fl _ 0 (by decide) (off1_0 L) _ 0 992 inb_S2048_S1024_0 inb_S2048_S16_992 _ (by decide) (by decide) _ _ x) ?_
      refine View.forall_pieces_cons (fun x => step_tcol (F := F) L fl _ 0 (by decide) (off1_0 L) _ 0 976 inb_S2048_S1024_0 inb_S2048_S16_976 _ (by decide) (by decide) _ _ x) ?_
      refine View.forall_pieces_cons (fun x => step_tcol (F := F) L fl _ 0 (by decide) (off1_0 L) _ 0 960 inb_S2048_S1024_0 inb_S2048_S16_960 _ (by decide) (by decide) _ _ x) ?_
      refine View.forall_pieces_cons (fun x => step_tcol (F := F) L fl _ 0 (by decide) (off1_0 L) _ 0 944 inb_S2048_S1024_0 inb_S2048_S16_944 _ (by decide) (by decide) _ _ x) ?_
      refine View.forall_pieces_cons (fun x => step_tcol (F := F) L fl _ 0 (by decide) (off1_0 L) _ 0 928 inb_S2048_S1024_0 inb_S2048_S16_928 _ (by decide) (by decide) _ _ x) ?_
      refine View.forall_pieces_cons (fun x => step_tcol (F := F) L fl _ 0 (by decide) (off1_0 L) _ 0 912 inb_S2048_S1024_0 inb_S2048_S16_912 _ (by decide) (by decide) _ _ x) ?_
      refine View.forall_pieces_cons (fun x => step_tcol (F := F) L fl _ 0 (by decide) (off1_0 L) _ 0 896 inb_S2048_S1024_0 inb_S2048_S16_896 _ (by decide) (by decide) _ _ x) ?_
      refine View.forall_pieces_cons (fun x => step_tcol (F := F) L fl _ 0 (by decide) (off1_0 L) _ 0 880 inb_S2048_S1024_0 inb_S2048_S16_880 _ (by decide) (by decide) _ _ x) ?_
      refine View.forall_pieces_cons (fun x => step_tcol (F := F) L fl _ 0 (by decide) (off1_0 L) _ 0 864 inb_S2048_S1024_0 inb_S2048_S16_864 _ (by decide) (by decide) _ _ x) ?_
      refine View.forall_pieces_cons (fun x => step_tcol (F := F) L fl _ 0 (by decide) (off1_0 L) _ 0 848 inb_S2048_S1024_0 inb_S2048_S16_848 _ (by decide) (by decide) _ _ x) ?_
      refine View.forall_pieces_cons (fun x => step_tcol (F := F) L fl _ 0 (by decide) (off1_0 L) _ 0 832 inb_S2048_S1024_0 inb_S2048_S16_832 _ (by decide) (by decide) _ _ x) ?_
      refine View.forall_pieces_cons (fun x => step_tcol (F := F) L fl _ 0 (by decide) (off1_0 L) _ 0 816 inb_S2048_S1024_0 inb_S2048_S16_816 _ (by decide) (by decide) _ _ x) ?_
      refine View.forall_pieces_cons (fun x => step_tcol (F := F) L fl _ 0 (by decide) (off1_0 L) _ 0 800 inb_S2048_S1024_0 inb_S2048_S16_800 _ (by decide) (by decide) _ _ x) ?_
      refine View.forall_pieces_cons (fun x => step_tcol (F := F) L fl _ 0 (by decide) (off1_0 L) _ 0 784 inb_S2048_S1024_0 inb_S2048_S16_784 _ (by decide) (by decide) _ _ x) ?_
      refine View.forall_pieces_cons (fun x => step_tcol (F := F) L fl _ 0 (by decide) (off1_0 L) _ 0 768 inb_S2048_S1024_0 inb_S2048_S16_768 _ (by decide) (by decide) _ _ x) ?_
      refine View.forall_pieces_cons (fun x => step_tcol (F := F) L fl _ 0 (by decide) (off1_0 L) _ 0 752 inb_S2048_S1024_0 inb_S2048_S16_752 _ (by decide) (by decide) _ _ x) ?_
      refine View.forall_pieces_cons (fun x => step_tcol (F := F) L fl _ 0 (by decide) (off1_0 L) _ 0 736 inb_S2048_S1024_0 inb_S2048_S16_736 _ (by decide) (by decide) _ _ x) ?_
      refine View.forall_pieces_cons (fun x => step_tcol (F := F) L fl _ 0 (by decide) (off1_0 L) _ 0 720 inb_S2048_S1024_0 inb_S2048_S16_720 _ (by decide) (by decide) _ _ x) ?_
      refine View.forall_pieces_cons (fun x => step_tcol (F := F) L fl _ 0 (by decide) (off1_0 L) _ 0 704 inb_S2048_S1024_0 inb_S2048_S16_704 _ (by decide) (by decide) _ _ x) ?_
      refine View.forall_pieces_cons (fun x => step_tcol (F := F) L fl _ 0 (by decide) (off1_0 L) _ 0 688 inb_S2048_S1024_0 inb_S2048_S16_688 _ (by decide) (by decide) _ _ x) ?_
      refine View.forall_pieces_cons (fun x => step_tcol (F := F) L fl _ 0 (by decide) (off1_0 L) _ 0 672 inb_S2048_S1024_0 inb_S2048_S16_672 _ (by decide) (by decide) _ _ x) ?_
      refine View.forall_pieces_cons (fun x => step_tcol (F := F) L fl _ 0 (by decide) (off1_0 L) _ 0 656 inb_S2048_S1024_0 inb_S2048_S16_656 _ (by decide) (by decide) _ _ x) ?_
      refine View.forall_pieces_cons (fun x => step_tcol (F := F) L fl _ 0 (by decide) (off1_0 L) _ 0 640 inb_S2048_S1024_0 inb_S2048_S16_640 _ (by decide) (by decide) _ _ x) ?_
      refine View.forall_pieces_cons (fun x => step_tcol (F := F) L fl _ 0 (by decide) (off1_0 L) _ 0 624 inb_S2048_S1024_0 inb_S2048_S16_624 _ (by decide) (by decide) _ _ x) ?_
      refine View.forall_pieces_cons (fun x => step_tcol (F := F) L fl _ 0 (by decide) (off1_0 L) _ 0 608 inb_S2048_S1024_0 inb_S2048_S16_608 _ (by decide) (by decide) _ _ x) ?_
      refine View.forall_pieces_cons (fun x => step_tcol (F := F) L fl _ 0 (by decide) (off1_0 L) _ 0 592 inb_S2048_S1024_0 inb_S2048_S16_592 _ (by decide) (by decide) _ _ x) ?_
      refine View.forall_pieces_cons (fun x => step_tcol (F := F) L fl _ 0 (by decide) (off1_0 L) _ 0 576 inb_S2048_S1024_0 inb_S2048_S16_576 _ (by decide) (by decide) _ _ x) ?_
      refine View.forall_pieces_cons (fun x => step_tcol (F := F) L fl _ 0 (by decide) (off1_0 L) _ 0 560 inb_S2048_S1024_0 inb_S2048_S16_560 _ (by decide) (by decide) _ _ x) ?_
      refine View.forall_pieces_cons (fun x => step_tcol (F := F) L fl _ 0 (by decide) (off1_0 L) _ 0 544 inb_S2048_S1024_0 inb_S2048_S16_544 _ (by decide) (by decide) _ _ x) ?_
      refine View.forall_pieces_cons (fun x => step_tcol (F := F) L fl _ 0 (by decide) (off1_0 L) _ 0 528 inb_S2048_S1024_0 inb_S2048_S16_528 _ (by decide) (by decide) _ _ x) ?_
      refine View.forall_pieces_cons (fun x => step_tcol (F := F) L fl _ 0 (by decide) (off1_0 L) _ 0 512 inb_S2048_S1024_0 inb_S2048_S16_512 _ (by decide) (by decide) _ _ x) ?_
      refine View.forall_pieces_cons (fun x => step_tcol (F := F) L fl _ 0 (by decide) (off1_0 L) _ 0 496 inb_S2048_S1024_0 inb_S2048_S16_496 _ (by decide) (by decide) _ _ x) ?_
      refine View.forall_pieces_cons (fun x => step_tcol (F := F) L fl _ 0 (by decide) (off1_0 L) _ 0 480 inb_S2048_S1024_0 inb_S2048_S16_480 _ (by decide) (by decide) _ _ x) ?_
      refine View.forall_pieces_cons (fun x => step_tcol (F := F) L fl _ 0 (by decide) (off1_0 L) _ 0 464 inb_S2048_S1024_0 inb_S2048_S16_464 _ (by decide) (by decide) _ _ x) ?_
      refine View.forall_pieces_cons (fun x => step_tcol (F := F) L fl _ 0 (by decide) (off1_0 L) _ 0 448 inb_S2048_S1024_0 inb_S2048_S16_448 _ (by decide) (by decide) _ _ x) ?_
      refine View.forall_pieces_cons (fun x => step_tcol (F := F) L fl _ 0 (by decide) (off1_0 L) _ 0 432 inb_S2048_S1024_0 inb_S2048_S16_432 _ (by decide) (by decide) _ _ x) ?_
      refine View.forall_pieces_cons (fun x => step_tcol (F := F) L fl _ 0 (by decide) (off1_0 L) _ 0 416 inb_S2048_S1024_0 inb_S2048_S16_416 _ (by decide) (by decide) _ _ x) ?_
      refine View.forall_pieces_cons (fun x => step_tcol (F := F) L fl _ 0 (by decide) (off1_0 L) _ 0 400 inb_S2048_S1024_0 inb_S2048_S16_400 _ (by decide) (by decide) _ _ x) ?_
      refine View.forall_pieces_cons (fun x => step_tcol (F := F) L fl _ 0 (by decide) (off1_0 L) _ 0 384 inb_S2048_S1024_0 inb_S2048_S16_384 _ (by decide) (by decide) _ _ x) ?_
      refine View.forall_pieces_cons (fun x => step_tcol (F := F) L fl _ 0 (by decide) (off1_0 L) _ 0 368 inb_S2048_S1024_0 inb_S2048_S16_368 _ (by decide) (by decide) _ _ x) ?_
      refine View.forall_pieces_cons (fun x => step_tcol (F := F) L fl _ 0 (by decide) (off1_0 L) _ 0 352 inb_S2048_S1024_0 inb_S2048_S16_352 _ (by decide) (by decide) _ _ x) ?_
      refine View.forall_pieces_cons (fun x => step_tcol (F := F) L fl _ 0 (by decide) (off1_0 L) _ 0 336 inb_S2048_S1024_0 inb_S2048_S16_336 _ (by decide) (by decide) _ _ x) ?_
      refine View.forall_pieces_cons (fun x => step_tcol (F := F) L fl _ 0 (by decide) (off1_0 L) _ 0 320 inb_S2048_S1024_0 inb_S2048_S16_320 _ (by decide) (by decide) _ _ x) ?_
      refine View.forall_pieces_cons (fun x => step_tcol (F := F) L fl _ 0 (by decide) (off1_0 L) _ 0 304 inb_S2048_S1024_0 inb_S2048_S16_304 _ (by decide) (by decide) _ _ x) ?_
      refine View.forall_pieces_cons (fun x => step_tcol (F := F) L fl _ 0 (by decide) (off1_0 L) _ 0 288 inb_S2048_S1024_0 inb_S2048_S16_288 _ (by decide) (by decide) _ _ x) ?_
      refine View.forall_pieces_cons (fun x => step_tcol (F := F) L fl _ 0 (by decide) (off1_0 L) _ 0 272 inb_S2048_S1024_0 inb_S2048_S16_272 _ (by decide) (by decide) _ _ x) ?_
      refine View.forall_pieces_cons (fun x => step_tcol (F := F) L fl _ 0 (by decide) (off1_0 L) _ 0 256 inb_S2048_S1024_0 inb_S2048_S16_256 _ (by decide) (by decide) _ _ x) ?_
      refine View.forall_pieces_cons (fun x => step_tcol (F := F) L fl _ 0 (by decide) (off1_0 L) _ 0 240 inb_S2048_S1024_0 inb_S2048_S16_240 _ (by decide) (by decide) _ _ x) ?_
      refine View.forall_pieces_cons (fun x => step_tcol (F := F) L fl _ 0 (by decide) (off1_0 L) _ 0 224 inb_S2048_S1024_0 inb_S2048_S16_224 _ (by decide) (by decide) _ _ x) ?_
      refine View.forall_pieces_cons (fun x => step_tcol (F := F) L fl _ 0 (by decide) (off1_0 L) _ 0 208 inb_S2048_S1024_0 inb_S2048_S16_208 _ (by decide) (by decide) _ _ x) ?_
      refine View.forall_pieces_cons (fun x => step_tcol (F := F) L fl _ 0 (by decide) (off1_0 L) _ 0 192 inb_S2048_S1024_0 inb_S2048_S16_192 _ (by decide) (by decide) _ _ x) ?_
      refine View.forall_pieces_cons (fun x => step_tcol (F := F) L fl _ 0 (by decide) (off1_0 L) _ 0 176 inb_S2048_S1024_0 inb_S2048_S16_176 _ (by decide) (by decide) _ _ x) ?_
      refine View.forall_pieces_cons (fun x => step_tcol (F := F) L fl _ 0 (by decide) (off1_0 L) _ 0 160 inb_S2048_S1024_0 inb_S2048_S16_160 _ (by decide) (by decide) _ _ x) ?_
      refine View.forall_pieces_cons (fun x => step_tcol (F := F) L fl _ 0 (by decide) (off1_0 L) _ 0 144 inb_S2048_S1024_0 inb_S2048_S16_144 _ (by decide) (by decide) _ _ x) ?_
      refine View.forall_pieces_cons (fun x => step_tcol (F := F) L fl _ 0 (by decide) (off1_0 L) _ 0 128 inb_S2048_S1024_0 inb_S2048_S16_128 _ (by decide) (by decide) _ _ x) ?_
      refine View.forall_pieces_cons (fun x => step_tcol (F := F) L fl _ 0 (by decide) (off1_0 L) _ 0 112 inb_S2048_S1024_0 inb_S2048_S16_112 _ (by decide) (by decide) _ _ x) ?_
      refine View.forall_pieces_cons (fun x => step_tcol (F := F) L fl _ 0 (by decide) (off1_0 L) _ 0 96 inb_S2048_S1024_0 inb_S2048_S16_96 _ (by decide) (by decide) _ _ x) ?_
      refine View.forall_pieces_cons (fun x => step_tcol (F := F) L fl _ 0 (by decide) (off1_0 L) _ 0 80 inb_S2048_S1024_0 inb_S2048_S16_80 _ (by decide) (by decide) _ _ x) ?_
      refine View.forall_pieces_cons (fun x => step_tcol (F := F) L fl _ 0 (by decide) (off1_0 L) _ 0 64 inb_S2048_S1024_0 inb_S2048_S16_64 _ (by decide) (by decide) _ _ x) ?_
      refine View.forall_pieces_cons (fun x => step_tcol (F := F) L fl _ 0 (by decide) (off1_0 L) _ 0 48 inb_S2048_S1024_0 inb_S2048_S16_48 _ (by decide) (by decide) _ _ x) ?_
      refine View.forall_pieces_cons (fun x => step_tcol (F := F) L fl _ 0 (by decide) (off1_0 L) _ 0 32 inb_S2048_S1024_0 inb_S2048_S16_32 _ (by decide) (by decide) _ _ x) ?_
      refine View.forall_pieces_cons (fun x => step_tcol (F := F) L fl _ 0 (by decide) (off1_0 L) _ 0 16 inb_S2048_S1024_0 inb_S2048_S16_16 _ (by decide) (by decide) _ _ x) ?_
      refine View.forall_pieces_cons (fun x => step_tcol (F := F) L fl _ 0 (by decide) (off1_0 L) _ 0 0 inb_S2048_S1024_0 inb_S2048_S16_0 _ (by decide) (by decide) _ _ x) ?_
      exact View.forall_pieces_nil
  have hin0 : ∀ x, ((listM k1_off2 k1_off2_inb).view.read (Elt F) g1p x).toNat
      < S507904x128.size (gathers_S507904x128_S50x128).axis := hin_list0 d L fl 0 g1p hfl hP.1
  sl_exec_parts
  sl_unroll
  sl_exec_parts (disch := decide)
  -- even block 0: the write-back scratch's slot 1 set aside, the pair loop by its invariant
  ihave H4s := (wb_split1 (F := F) d L _) $$ H4'
  icases H4s with ⟨H4a, H4r⟩
  sl_for (inv0 d L fl qt tab O (insert (SemLoc.dma cc1_scratch8.sem, (default : HIx 1)) (insert (SemLoc.dma cc1_scratch7.sem, (default : HIx 1)) W)) 0) $$ [Hmw Hg0 Ht' H3' H1' H2' H4r Hg1 HO]
  case region => intro k _; exact pair0_region d L fl qt tab O _ 0#32 0#32 T0 _ k
  ·
    unfold inv0
    isplitl [Hmw]; · iexact Hmw
    iexists _; iexists _; iexists _; iexists _; iexists k1_off2; iexists k1_off2_inb
    isplitr; rotate_left
    · isplitl [Hg0]; rotate_left
      · isplitl [H1']; · iexact H1'
        isplitl [Ht']; · iexact Ht'
        isplitl [H3']; · iexact H3'
        isplitl [H2']; · iexact H2'
        isplitl [H4r]; · iexact H4r
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A0: the list's fifty words are not touched by the later stores
          intro i hi
          have hi0 := (mem_listM _ _ i).mp hi
          rw [k1_off2_eq] at hi0
          simp only [Matrix.cons_val_zero] at hi0
          exact (keep_word d L _ _ 1024 (by rfl) i (by omega)).symm
    · ipureintro
      -- HOLE B0: the values at the loop's entry
      have hRows0 : RowsV d L fl tab (wL L).val 0 (2 * 0) 0 _ :=
        RowsV_landing0 d L fl tab (by decide) (wL L).val 0 (2 * 0) g1p k1_off2 k1_off2_inb
          (words_of_TixV d L fl (wL L).val 0 0 (2 * 0) (by decide) (by decide) g1p hP.1 k1_off2 (by rw [k1_off2_eq]; rfl)) hin0 f3
      have_entry even_entry
      refine key hfl hP.1 hP.2 hRows0 ?_ (by rfl) ?_ (by rfl) (by rw [k1_off2_eq]; rfl)
      ·
        refine View.forall_pieces_cons (fun x => step_trow (F := F) L fl _ 1 (by decide) (off1_1 L) _ 1024 2032 inb_S2048_S1024_1024 inb_S2048_S16_2032 _ (by decide) (by decide) _ _ x) ?_
        refine View.forall_pieces_cons (fun x => step_trow (F := F) L fl _ 1 (by decide) (off1_1 L) _ 1024 2016 inb_S2048_S1024_1024 inb_S2048_S16_2016 _ (by decide) (by decide) _ _ x) ?_
        refine View.forall_pieces_cons (fun x => step_trow (F := F) L fl _ 1 (by decide) (off1_1 L) _ 1024 2000 inb_S2048_S1024_1024 inb_S2048_S16_2000 _ (by decide) (by decide) _ _ x) ?_
        refine View.forall_pieces_cons (fun x => step_trow (F := F) L fl _ 1 (by decide) (off1_1 L) _ 1024 1984 inb_S2048_S1024_1024 inb_S2048_S16_1984 _ (by decide) (by decide) _ _ x) ?_
        refine View.forall_pieces_cons (fun x => step_trow (F := F) L fl _ 1 (by decide) (off1_1 L) _ 1024 1968 inb_S2048_S1024_1024 inb_S2048_S16_1968 _ (by decide) (by decide) _ _ x) ?_
        refine View.forall_pieces_cons (fun x => step_trow (F := F) L fl _ 1 (by decide) (off1_1 L) _ 1024 1952 inb_S2048_S1024_1024 inb_S2048_S16_1952 _ (by decide) (by decide) _ _ x) ?_
        refine View.forall_pieces_cons (fun x => step_trow (F := F) L fl _ 1 (by decide) (off1_1 L) _ 1024 1936 inb_S2048_S1024_1024 inb_S2048_S16_1936 _ (by decide) (by decide) _ _ x) ?_
        refine View.forall_pieces_cons (fun x => step_trow (F := F) L fl _ 1 (by decide) (off1_1 L) _ 1024 1920 inb_S2048_S1024_1024 inb_S2048_S16_1920 _ (by decide) (by decide) _ _ x) ?_
        refine View.forall_pieces_cons (fun x => step_trow (F := F) L fl _ 1 (by decide) (off1_1 L) _ 1024 1904 inb_S2048_S1024_1024 inb_S2048_S16_1904 _ (by decide) (by decide) _ _ x) ?_
        refine View.forall_pieces_cons (fun x => step_trow (F := F) L fl _ 1 (by decide) (off1_1 L) _ 1024 1888 inb_S2048_S1024_1024 inb_S2048_S16_1888 _ (by decide) (by decide) _ _ x) ?_
        refine View.forall_pieces_cons (fun x => step_trow (F := F) L fl _ 1 (by decide) (off1_1 L) _ 1024 1872 inb_S2048_S1024_1024 inb_S2048_S16_1872 _ (by decide) (by decide) _ _ x) ?_
        refine View.forall_pieces_cons (fun x => step_trow (F := F) L fl _ 1 (by decide) (off1_1 L) _ 1024 1856 inb_S2048_S1024_1024 inb_S2048_S16_1856 _ (by decide) (by decide) _ _ x) ?_
        refine View.forall_pieces_cons (fun x => step_trow (F := F) L fl _ 1 (by decide) (off1_1 L) _ 1024 1840 inb_S2048_S1024_1024 inb_S2048_S16_1840 _ (by decide) (by decide) _ _ x) ?_
        refine View.forall_pieces_cons (fun x => step_trow (F := F) L fl _ 1 (by decide) (off1_1 L) _ 1024 1824 inb_S2048_S1024_1024 inb_S2048_S16_1824 _ (by decide) (by decide) _ _ x) ?_
        refine View.forall_pieces_cons (fun x => step_trow (F := F) L fl _ 1 (by decide) (off1_1 L) _ 1024 1808 inb_S2048_S1024_1024 inb_S2048_S16_1808 _ (by decide) (by decide) _ _ x) ?_
        refine View.forall_pieces_cons (fun x => step_trow (F := F) L fl _ 1 (by decide) (off1_1 L) _ 1024 1792 inb_S2048_S1024_1024 inb_S2048_S16_1792 _ (by decide) (by decide) _ _ x) ?_
        refine View.forall_pieces_cons (fun x => step_trow (F := F) L fl _ 1 (by decide) (off1_1 L) _ 1024 1776 inb_S2048_S1024_1024 inb_S2048_S16_1776 _ (by decide) (by decide) _ _ x) ?_
        refine View.forall_pieces_cons (fun x => step_trow (F := F) L fl _ 1 (by decide) (off1_1 L) _ 1024 1760 inb_S2048_S1024_1024 inb_S2048_S16_1760 _ (by decide) (by decide) _ _ x) ?_
        refine View.forall_pieces_cons (fun x => step_trow (F := F) L fl _ 1 (by decide) (off1_1 L) _ 1024 1744 inb_S2048_S1024_1024 inb_S2048_S16_1744 _ (by decide) (by decide) _ _ x) ?_
        refine View.forall_pieces_cons (fun x => step_trow (F := F) L fl _ 1 (by decide) (off1_1 L) _ 1024 1728 inb_S2048_S1024_1024 inb_S2048_S16_1728 _ (by decide) (by decide) _ _ x) ?_
        refine View.forall_pieces_cons (fun x => step_trow (F := F) L fl _ 1 (by decide) (off1_1 L) _ 1024 1712 inb_S2048_S1024_1024 inb_S2048_S16_1712 _ (by decide) (by decide) _ _ x) ?_
        refine View.forall_pieces_cons (fun x => step_trow (F := F) L fl _ 1 (by decide) (off1_1 L) _ 1024 1696 inb_S2048_S1024_1024 inb_S2048_S16_1696 _ (by decide) (by decide) _ _ x) ?_
        refine View.forall_pieces_cons (fun x => step_trow (F := F) L fl _ 1 (by decide) (off1_1 L) _ 1024 1680 inb_S2048_S1024_1024 inb_S2048_S16_1680 _ (by decide) (by decide) _ _ x) ?_
        refine View.forall_pieces_cons (fun x => step_trow (F := F) L fl _ 1 (by decide) (off1_1 L) _ 1024 1664 inb_S2048_S1024_1024 inb_S2048_S16_1664 _ (by decide) (by decide) _ _ x) ?_
        refine View.forall_pieces_cons (fun x => step_trow (F := F) L fl _ 1 (by decide) (off1_1 L) _ 1024 1648 inb_S2048_S1024_1024 inb_S2048_S16_1648 _ (by decide) (by decide) _ _ x) ?_
        refine View.forall_pieces_cons (fun x => step_trow (F := F) L fl _ 1 (by decide) (off1_1 L) _ 1024 1632 inb_S2048_S1024_1024 inb_S2048_S16_1632 _ (by decide) (by decide) _ _ x) ?_
        refine View.forall_pieces_cons (fun x => step_trow (F := F) L fl _ 1 (by decide) (off1_1 L) _ 1024 1616 inb_S2048_S1024_1024 inb_S2048_S16_1616 _ (by decide) (by decide) _ _ x) ?_
        refine View.forall_pieces_cons (fun x => step_trow (F := F) L fl _ 1 (by decide) (off1_1 L) _ 1024 1600 inb_S2048_S1024_1024 inb_S2048_S16_1600 _ (by decide) (by decide) _ _ x) ?_
        refine View.forall_pieces_cons (fun x => step_trow (F := F) L fl _ 1 (by decide) (off1_1 L) _ 1024 1584 inb_S2048_S1024_1024 inb_S2048_S16_1584 _ (by decide) (by decide) _ _ x) ?_
        refine View.forall_pieces_cons (fun x => step_trow (F := F) L fl _ 1 (by decide) (off1_1 L) _ 1024 1568 inb_S2048_S1024_1024 inb_S2048_S16_1568 _ (by decide) (by decide) _ _ x) ?_
        refine View.forall_pieces_cons (fun x => step_trow (F := F) L fl _ 1 (by decide) (off1_1 L) _ 1024 1552 inb_S2048_S1024_1024 inb_S2048_S16_1552 _ (by decide) (by decide) _ _ x) ?_
        refine View.forall_pieces_cons (fun x => step_trow (F := F) L fl _ 1 (by decide) (off1_1 L) _ 1024 1536 inb_S2048_S1024_1024 inb_S2048_S16_1536 _ (by decide) (by decide) _ _ x) ?_
        refine View.forall_pieces_cons (fun x => step_trow (F := F) L fl _ 1 (by decide) (off1_1 L) _ 1024 1520 inb_S2048_S1024_1024 inb_S2048_S16_1520 _ (by decide) (by decide) _ _ x) ?_
        refine View.forall_pieces_cons (fun x => step_trow (F := F) L fl _ 1 (by decide) (off1_1 L) _ 1024 1504 inb_S2048_S1024_1024 inb_S2048_S16_1504 _ (by decide) (by decide) _ _ x) ?_
        refine View.forall_pieces_cons (fun x => step_trow (F := F) L fl _ 1 (by decide) (off1_1 L) _ 1024 1488 inb_S2048_S1024_1024 inb_S2048_S16_1488 _ (by decide) (by decide) _ _ x) ?_
        refine View.forall_pieces_cons (fun x => step_trow (F := F) L fl _ 1 (by decide) (off1_1 L) _ 1024 1472 inb_S2048_S1024_1024 inb_S2048_S16_1472 _ (by decide) (by decide) _ _ x) ?_
        refine View.forall_pieces_cons (fun x => step_trow (F := F) L fl _ 1 (by decide) (off1_1 L) _ 1024 1456 inb_S2048_S1024_1024 inb_S2048_S16_1456 _ (by decide) (by decide) _ _ x) ?_
        refine View.forall_pieces_cons (fun x => step_trow (F := F) L fl _ 1 (by decide) (off1_1 L) _ 1024 1440 inb_S2048_S1024_1024 inb_S2048_S16_1440 _ (by decide) (by decide) _ _ x) ?_
        refine View.forall_pieces_cons (fun x => step_trow (F := F) L fl _ 1 (by decide) (off1_1 L) _ 1024 1424 inb_S2048_S1024_1024 inb_S2048_S16_1424 _ (by decide) (by decide) _ _ x) ?_
        refine View.forall_pieces_cons (fun x => step_trow (F := F) L fl _ 1 (by decide) (off1_1 L) _ 1024 1408 inb_S2048_S1024_1024 inb_S2048_S16_1408 _ (by decide) (by decide) _ _ x) ?_
        refine View.forall_pieces_cons (fun x => step_trow (F := F) L fl _ 1 (by decide) (off1_1 L) _ 1024 1392 inb_S2048_S1024_1024 inb_S2048_S16_1392 _ (by decide) (by decide) _ _ x) ?_
        refine View.forall_pieces_cons (fun x => step_trow (F := F) L fl _ 1 (by decide) (off1_1 L) _ 1024 1376 inb_S2048_S1024_1024 inb_S2048_S16_1376 _ (by decide) (by decide) _ _ x) ?_
        refine View.forall_pieces_cons (fun x => step_trow (F := F) L fl _ 1 (by decide) (off1_1 L) _ 1024 1360 inb_S2048_S1024_1024 inb_S2048_S16_1360 _ (by decide) (by decide) _ _ x) ?_
        refine View.forall_pieces_cons (fun x => step_trow (F := F) L fl _ 1 (by decide) (off1_1 L) _ 1024 1344 inb_S2048_S1024_1024 inb_S2048_S16_1344 _ (by decide) (by decide) _ _ x) ?_
        refine View.forall_pieces_cons (fun x => step_trow (F := F) L fl _ 1 (by decide) (off1_1 L) _ 1024 1328 inb_S2048_S1024_1024 inb_S2048_S16_1328 _ (by decide) (by decide) _ _ x) ?_
        refine View.forall_pieces_cons (fun x => step_trow (F := F) L fl _ 1 (by decide) (off1_1 L) _ 1024 1312 inb_S2048_S1024_1024 inb_S2048_S16_1312 _ (by decide) (by decide) _ _ x) ?_
        refine View.forall_pieces_cons (fun x => step_trow (F := F) L fl _ 1 (by decide) (off1_1 L) _ 1024 1296 inb_S2048_S1024_1024 inb_S2048_S16_1296 _ (by decide) (by decide) _ _ x) ?_
        refine View.forall_pieces_cons (fun x => step_trow (F := F) L fl _ 1 (by decide) (off1_1 L) _ 1024 1280 inb_S2048_S1024_1024 inb_S2048_S16_1280 _ (by decide) (by decide) _ _ x) ?_
        refine View.forall_pieces_cons (fun x => step_trow (F := F) L fl _ 1 (by decide) (off1_1 L) _ 1024 1264 inb_S2048_S1024_1024 inb_S2048_S16_1264 _ (by decide) (by decide) _ _ x) ?_
        refine View.forall_pieces_cons (fun x => step_trow (F := F) L fl _ 1 (by decide) (off1_1 L) _ 1024 1248 inb_S2048_S1024_1024 inb_S2048_S16_1248 _ (by decide) (by decide) _ _ x) ?_
        refine View.forall_pieces_cons (fun x => step_trow (F := F) L fl _ 1 (by decide) (off1_1 L) _ 1024 1232 inb_S2048_S1024_1024 inb_S2048_S16_1232 _ (by decide) (by decide) _ _ x) ?_
        refine View.forall_pieces_cons (fun x => step_trow (F := F) L fl _ 1 (by decide) (off1_1 L) _ 1024 1216 inb_S2048_S1024_1024 inb_S2048_S16_1216 _ (by decide) (by decide) _ _ x) ?_
        refine View.forall_pieces_cons (fun x => step_trow (F := F) L fl _ 1 (by decide) (off1_1 L) _ 1024 1200 inb_S2048_S1024_1024 inb_S2048_S16_1200 _ (by decide) (by decide) _ _ x) ?_
        refine View.forall_pieces_cons (fun x => step_trow (F := F) L fl _ 1 (by decide) (off1_1 L) _ 1024 1184 inb_S2048_S1024_1024 inb_S2048_S16_1184 _ (by decide) (by decide) _ _ x) ?_
        refine View.forall_pieces_cons (fun x => step_trow (F := F) L fl _ 1 (by decide) (off1_1 L) _ 1024 1168 inb_S2048_S1024_1024 inb_S2048_S16_1168 _ (by decide) (by decide) _ _ x) ?_
        refine View.forall_pieces_cons (fun x => step_trow (F := F) L fl _ 1 (by decide) (off1_1 L) _ 1024 1152 inb_S2048_S1024_1024 inb_S2048_S16_1152 _ (by decide) (by decide) _ _ x) ?_
        refine View.forall_pieces_cons (fun x => step_trow (F := F) L fl _ 1 (by decide) (off1_1 L) _ 1024 1136 inb_S2048_S1024_1024 inb_S2048_S16_1136 _ (by decide) (by decide) _ _ x) ?_
        refine View.forall_pieces_cons (fun x => step_trow (F := F) L fl _ 1 (by decide) (off1_1 L) _ 1024 1120 inb_S2048_S1024_1024 inb_S2048_S16_1120 _ (by decide) (by decide) _ _ x) ?_
        refine View.forall_pieces_cons (fun x => step_trow (F := F) L fl _ 1 (by decide) (off1_1 L) _ 1024 1104 inb_S2048_S1024_1024 inb_S2048_S16_1104 _ (by decide) (by decide) _ _ x) ?_
        refine View.forall_pieces_cons (fun x => step_trow (F := F) L fl _ 1 (by decide) (off1_1 L) _ 1024 1088 inb_S2048_S1024_1024 inb_S2048_S16_1088 _ (by decide) (by decide) _ _ x) ?_
        refine View.forall_pieces_cons (fun x => step_trow (F := F) L fl _ 1 (by decide) (off1_1 L) _ 1024 1072 inb_S2048_S1024_1024 inb_S2048_S16_1072 _ (by decide) (by decide) _ _ x) ?_
        refine View.forall_pieces_cons (fun x => step_trow (F := F) L fl _ 1 (by decide) (off1_1 L) _ 1024 1056 inb_S2048_S1024_1024 inb_S2048_S16_1056 _ (by decide) (by decide) _ _ x) ?_
        refine View.forall_pieces_cons (fun x => step_trow (F := F) L fl _ 1 (by decide) (off1_1 L) _ 1024 1040 inb_S2048_S1024_1024 inb_S2048_S16_1040 _ (by decide) (by decide) _ _ x) ?_
        refine View.forall_pieces_cons (fun x => step_trow (F := F) L fl _ 1 (by decide) (off1_1 L) _ 1024 1024 inb_S2048_S1024_1024 inb_S2048_S16_1024 _ (by decide) (by decide) _ _ x) ?_
        exact View.forall_pieces_nil
      ·
        refine View.forall_pieces_cons (fun x => step_tcol (F := F) L fl _ 1 (by decide) (off1_1 L) _ 1024 2032 inb_S2048_S1024_1024 inb_S2048_S16_2032 _ (by decide) (by decide) _ _ x) ?_
        refine View.forall_pieces_cons (fun x => step_tcol (F := F) L fl _ 1 (by decide) (off1_1 L) _ 1024 2016 inb_S2048_S1024_1024 inb_S2048_S16_2016 _ (by decide) (by decide) _ _ x) ?_
        refine View.forall_pieces_cons (fun x => step_tcol (F := F) L fl _ 1 (by decide) (off1_1 L) _ 1024 2000 inb_S2048_S1024_1024 inb_S2048_S16_2000 _ (by decide) (by decide) _ _ x) ?_
        refine View.forall_pieces_cons (fun x => step_tcol (F := F) L fl _ 1 (by decide) (off1_1 L) _ 1024 1984 inb_S2048_S1024_1024 inb_S2048_S16_1984 _ (by decide) (by decide) _ _ x) ?_
        refine View.forall_pieces_cons (fun x => step_tcol (F := F) L fl _ 1 (by decide) (off1_1 L) _ 1024 1968 inb_S2048_S1024_1024 inb_S2048_S16_1968 _ (by decide) (by decide) _ _ x) ?_
        refine View.forall_pieces_cons (fun x => step_tcol (F := F) L fl _ 1 (by decide) (off1_1 L) _ 1024 1952 inb_S2048_S1024_1024 inb_S2048_S16_1952 _ (by decide) (by decide) _ _ x) ?_
        refine View.forall_pieces_cons (fun x => step_tcol (F := F) L fl _ 1 (by decide) (off1_1 L) _ 1024 1936 inb_S2048_S1024_1024 inb_S2048_S16_1936 _ (by decide) (by decide) _ _ x) ?_
        refine View.forall_pieces_cons (fun x => step_tcol (F := F) L fl _ 1 (by decide) (off1_1 L) _ 1024 1920 inb_S2048_S1024_1024 inb_S2048_S16_1920 _ (by decide) (by decide) _ _ x) ?_
        refine View.forall_pieces_cons (fun x => step_tcol (F := F) L fl _ 1 (by decide) (off1_1 L) _ 1024 1904 inb_S2048_S1024_1024 inb_S2048_S16_1904 _ (by decide) (by decide) _ _ x) ?_
        refine View.forall_pieces_cons (fun x => step_tcol (F := F) L fl _ 1 (by decide) (off1_1 L) _ 1024 1888 inb_S2048_S1024_1024 inb_S2048_S16_1888 _ (by decide) (by decide) _ _ x) ?_
        refine View.forall_pieces_cons (fun x => step_tcol (F := F) L fl _ 1 (by decide) (off1_1 L) _ 1024 1872 inb_S2048_S1024_1024 inb_S2048_S16_1872 _ (by decide) (by decide) _ _ x) ?_
        refine View.forall_pieces_cons (fun x => step_tcol (F := F) L fl _ 1 (by decide) (off1_1 L) _ 1024 1856 inb_S2048_S1024_1024 inb_S2048_S16_1856 _ (by decide) (by decide) _ _ x) ?_
        refine View.forall_pieces_cons (fun x => step_tcol (F := F) L fl _ 1 (by decide) (off1_1 L) _ 1024 1840 inb_S2048_S1024_1024 inb_S2048_S16_1840 _ (by decide) (by decide) _ _ x) ?_
        refine View.forall_pieces_cons (fun x => step_tcol (F := F) L fl _ 1 (by decide) (off1_1 L) _ 1024 1824 inb_S2048_S1024_1024 inb_S2048_S16_1824 _ (by decide) (by decide) _ _ x) ?_
        refine View.forall_pieces_cons (fun x => step_tcol (F := F) L fl _ 1 (by decide) (off1_1 L) _ 1024 1808 inb_S2048_S1024_1024 inb_S2048_S16_1808 _ (by decide) (by decide) _ _ x) ?_
        refine View.forall_pieces_cons (fun x => step_tcol (F := F) L fl _ 1 (by decide) (off1_1 L) _ 1024 1792 inb_S2048_S1024_1024 inb_S2048_S16_1792 _ (by decide) (by decide) _ _ x) ?_
        refine View.forall_pieces_cons (fun x => step_tcol (F := F) L fl _ 1 (by decide) (off1_1 L) _ 1024 1776 inb_S2048_S1024_1024 inb_S2048_S16_1776 _ (by decide) (by decide) _ _ x) ?_
        refine View.forall_pieces_cons (fun x => step_tcol (F := F) L fl _ 1 (by decide) (off1_1 L) _ 1024 1760 inb_S2048_S1024_1024 inb_S2048_S16_1760 _ (by decide) (by decide) _ _ x) ?_
        refine View.forall_pieces_cons (fun x => step_tcol (F := F) L fl _ 1 (by decide) (off1_1 L) _ 1024 1744 inb_S2048_S1024_1024 inb_S2048_S16_1744 _ (by decide) (by decide) _ _ x) ?_
        refine View.forall_pieces_cons (fun x => step_tcol (F := F) L fl _ 1 (by decide) (off1_1 L) _ 1024 1728 inb_S2048_S1024_1024 inb_S2048_S16_1728 _ (by decide) (by decide) _ _ x) ?_
        refine View.forall_pieces_cons (fun x => step_tcol (F := F) L fl _ 1 (by decide) (off1_1 L) _ 1024 1712 inb_S2048_S1024_1024 inb_S2048_S16_1712 _ (by decide) (by decide) _ _ x) ?_
        refine View.forall_pieces_cons (fun x => step_tcol (F := F) L fl _ 1 (by decide) (off1_1 L) _ 1024 1696 inb_S2048_S1024_1024 inb_S2048_S16_1696 _ (by decide) (by decide) _ _ x) ?_
        refine View.forall_pieces_cons (fun x => step_tcol (F := F) L fl _ 1 (by decide) (off1_1 L) _ 1024 1680 inb_S2048_S1024_1024 inb_S2048_S16_1680 _ (by decide) (by decide) _ _ x) ?_
        refine View.forall_pieces_cons (fun x => step_tcol (F := F) L fl _ 1 (by decide) (off1_1 L) _ 1024 1664 inb_S2048_S1024_1024 inb_S2048_S16_1664 _ (by decide) (by decide) _ _ x) ?_
        refine View.forall_pieces_cons (fun x => step_tcol (F := F) L fl _ 1 (by decide) (off1_1 L) _ 1024 1648 inb_S2048_S1024_1024 inb_S2048_S16_1648 _ (by decide) (by decide) _ _ x) ?_
        refine View.forall_pieces_cons (fun x => step_tcol (F := F) L fl _ 1 (by decide) (off1_1 L) _ 1024 1632 inb_S2048_S1024_1024 inb_S2048_S16_1632 _ (by decide) (by decide) _ _ x) ?_
        refine View.forall_pieces_cons (fun x => step_tcol (F := F) L fl _ 1 (by decide) (off1_1 L) _ 1024 1616 inb_S2048_S1024_1024 inb_S2048_S16_1616 _ (by decide) (by decide) _ _ x) ?_
        refine View.forall_pieces_cons (fun x => step_tcol (F := F) L fl _ 1 (by decide) (off1_1 L) _ 1024 1600 inb_S2048_S1024_1024 inb_S2048_S16_1600 _ (by decide) (by decide) _ _ x) ?_
        refine View.forall_pieces_cons (fun x => step_tcol (F := F) L fl _ 1 (by decide) (off1_1 L) _ 1024 1584 inb_S2048_S1024_1024 inb_S2048_S16_1584 _ (by decide) (by decide) _ _ x) ?_
        refine View.forall_pieces_cons (fun x => step_tcol (F := F) L fl _ 1 (by decide) (off1_1 L) _ 1024 1568 inb_S2048_S1024_1024 inb_S2048_S16_1568 _ (by decide) (by decide) _ _ x) ?_
        refine View.forall_pieces_cons (fun x => step_tcol (F := F) L fl _ 1 (by decide) (off1_1 L) _ 1024 1552 inb_S2048_S1024_1024 inb_S2048_S16_1552 _ (by decide) (by decide) _ _ x) ?_
        refine View.forall_pieces_cons (fun x => step_tcol (F := F) L fl _ 1 (by decide) (off1_1 L) _ 1024 1536 inb_S2048_S1024_1024 inb_S2048_S16_1536 _ (by decide) (by decide) _ _ x) ?_
        refine View.forall_pieces_cons (fun x => step_tcol (F := F) L fl _ 1 (by decide) (off1_1 L) _ 1024 1520 inb_S2048_S1024_1024 inb_S2048_S16_1520 _ (by decide) (by decide) _ _ x) ?_
        refine View.forall_pieces_cons (fun x => step_tcol (F := F) L fl _ 1 (by decide) (off1_1 L) _ 1024 1504 inb_S2048_S1024_1024 inb_S2048_S16_1504 _ (by decide) (by decide) _ _ x) ?_
        refine View.forall_pieces_cons (fun x => step_tcol (F := F) L fl _ 1 (by decide) (off1_1 L) _ 1024 1488 inb_S2048_S1024_1024 inb_S2048_S16_1488 _ (by decide) (by decide) _ _ x) ?_
        refine View.forall_pieces_cons (fun x => step_tcol (F := F) L fl _ 1 (by decide) (off1_1 L) _ 1024 1472 inb_S2048_S1024_1024 inb_S2048_S16_1472 _ (by decide) (by decide) _ _ x) ?_
        refine View.forall_pieces_cons (fun x => step_tcol (F := F) L fl _ 1 (by decide) (off1_1 L) _ 1024 1456 inb_S2048_S1024_1024 inb_S2048_S16_1456 _ (by decide) (by decide) _ _ x) ?_
        refine View.forall_pieces_cons (fun x => step_tcol (F := F) L fl _ 1 (by decide) (off1_1 L) _ 1024 1440 inb_S2048_S1024_1024 inb_S2048_S16_1440 _ (by decide) (by decide) _ _ x) ?_
        refine View.forall_pieces_cons (fun x => step_tcol (F := F) L fl _ 1 (by decide) (off1_1 L) _ 1024 1424 inb_S2048_S1024_1024 inb_S2048_S16_1424 _ (by decide) (by decide) _ _ x) ?_
        refine View.forall_pieces_cons (fun x => step_tcol (F := F) L fl _ 1 (by decide) (off1_1 L) _ 1024 1408 inb_S2048_S1024_1024 inb_S2048_S16_1408 _ (by decide) (by decide) _ _ x) ?_
        refine View.forall_pieces_cons (fun x => step_tcol (F := F) L fl _ 1 (by decide) (off1_1 L) _ 1024 1392 inb_S2048_S1024_1024 inb_S2048_S16_1392 _ (by decide) (by decide) _ _ x) ?_
        refine View.forall_pieces_cons (fun x => step_tcol (F := F) L fl _ 1 (by decide) (off1_1 L) _ 1024 1376 inb_S2048_S1024_1024 inb_S2048_S16_1376 _ (by decide) (by decide) _ _ x) ?_
        refine View.forall_pieces_cons (fun x => step_tcol (F := F) L fl _ 1 (by decide) (off1_1 L) _ 1024 1360 inb_S2048_S1024_1024 inb_S2048_S16_1360 _ (by decide) (by decide) _ _ x) ?_
        refine View.forall_pieces_cons (fun x => step_tcol (F := F) L fl _ 1 (by decide) (off1_1 L) _ 1024 1344 inb_S2048_S1024_1024 inb_S2048_S16_1344 _ (by decide) (by decide) _ _ x) ?_
        refine View.forall_pieces_cons (fun x => step_tcol (F := F) L fl _ 1 (by decide) (off1_1 L) _ 1024 1328 inb_S2048_S1024_1024 inb_S2048_S16_1328 _ (by decide) (by decide) _ _ x) ?_
        refine View.forall_pieces_cons (fun x => step_tcol (F := F) L fl _ 1 (by decide) (off1_1 L) _ 1024 1312 inb_S2048_S1024_1024 inb_S2048_S16_1312 _ (by decide) (by decide) _ _ x) ?_
        refine View.forall_pieces_cons (fun x => step_tcol (F := F) L fl _ 1 (by decide) (off1_1 L) _ 1024 1296 inb_S2048_S1024_1024 inb_S2048_S16_1296 _ (by decide) (by decide) _ _ x) ?_
        refine View.forall_pieces_cons (fun x => step_tcol (F := F) L fl _ 1 (by decide) (off1_1 L) _ 1024 1280 inb_S2048_S1024_1024 inb_S2048_S16_1280 _ (by decide) (by decide) _ _ x) ?_
        refine View.forall_pieces_cons (fun x => step_tcol (F := F) L fl _ 1 (by decide) (off1_1 L) _ 1024 1264 inb_S2048_S1024_1024 inb_S2048_S16_1264 _ (by decide) (by decide) _ _ x) ?_
        refine View.forall_pieces_cons (fun x => step_tcol (F := F) L fl _ 1 (by decide) (off1_1 L) _ 1024 1248 inb_S2048_S1024_1024 inb_S2048_S16_1248 _ (by decide) (by decide) _ _ x) ?_
        refine View.forall_pieces_cons (fun x => step_tcol (F := F) L fl _ 1 (by decide) (off1_1 L) _ 1024 1232 inb_S2048_S1024_1024 inb_S2048_S16_1232 _ (by decide) (by decide) _ _ x) ?_
        refine View.forall_pieces_cons (fun x => step_tcol (F := F) L fl _ 1 (by decide) (off1_1 L) _ 1024 1216 inb_S2048_S1024_1024 inb_S2048_S16_1216 _ (by decide) (by decide) _ _ x) ?_
        refine View.forall_pieces_cons (fun x => step_tcol (F := F) L fl _ 1 (by decide) (off1_1 L) _ 1024 1200 inb_S2048_S1024_1024 inb_S2048_S16_1200 _ (by decide) (by decide) _ _ x) ?_
        refine View.forall_pieces_cons (fun x => step_tcol (F := F) L fl _ 1 (by decide) (off1_1 L) _ 1024 1184 inb_S2048_S1024_1024 inb_S2048_S16_1184 _ (by decide) (by decide) _ _ x) ?_
        refine View.forall_pieces_cons (fun x => step_tcol (F := F) L fl _ 1 (by decide) (off1_1 L) _ 1024 1168 inb_S2048_S1024_1024 inb_S2048_S16_1168 _ (by decide) (by decide) _ _ x) ?_
        refine View.forall_pieces_cons (fun x => step_tcol (F := F) L fl _ 1 (by decide) (off1_1 L) _ 1024 1152 inb_S2048_S1024_1024 inb_S2048_S16_1152 _ (by decide) (by decide) _ _ x) ?_
        refine View.forall_pieces_cons (fun x => step_tcol (F := F) L fl _ 1 (by decide) (off1_1 L) _ 1024 1136 inb_S2048_S1024_1024 inb_S2048_S16_1136 _ (by decide) (by decide) _ _ x) ?_
        refine View.forall_pieces_cons (fun x => step_tcol (F := F) L fl _ 1 (by decide) (off1_1 L) _ 1024 1120 inb_S2048_S1024_1024 inb_S2048_S16_1120 _ (by decide) (by decide) _ _ x) ?_
        refine View.forall_pieces_cons (fun x => step_tcol (F := F) L fl _ 1 (by decide) (off1_1 L) _ 1024 1104 inb_S2048_S1024_1024 inb_S2048_S16_1104 _ (by decide) (by decide) _ _ x) ?_
        refine View.forall_pieces_cons (fun x => step_tcol (F := F) L fl _ 1 (by decide) (off1_1 L) _ 1024 1088 inb_S2048_S1024_1024 inb_S2048_S16_1088 _ (by decide) (by decide) _ _ x) ?_
        refine View.forall_pieces_cons (fun x => step_tcol (F := F) L fl _ 1 (by decide) (off1_1 L) _ 1024 1072 inb_S2048_S1024_1024 inb_S2048_S16_1072 _ (by decide) (by decide) _ _ x) ?_
        refine View.forall_pieces_cons (fun x => step_tcol (F := F) L fl _ 1 (by decide) (off1_1 L) _ 1024 1056 inb_S2048_S1024_1024 inb_S2048_S16_1056 _ (by decide) (by decide) _ _ x) ?_
        refine View.forall_pieces_cons (fun x => step_tcol (F := F) L fl _ 1 (by decide) (off1_1 L) _ 1024 1040 inb_S2048_S1024_1024 inb_S2048_S16_1040 _ (by decide) (by decide) _ _ x) ?_
        refine View.forall_pieces_cons (fun x => step_tcol (F := F) L fl _ 1 (by decide) (off1_1 L) _ 1024 1024 inb_S2048_S1024_1024 inb_S2048_S16_1024 _ (by decide) (by decide) _ _ x) ?_
        exact View.forall_pieces_nil
  iintro %_ HI
  unfold inv0
  icases HI with ⟨-, %r, %g1, %g2, %wb, %o, %ho, ⟨%hT, %hR, %ho_eq, %hV⟩, Hg0, H1, Ht, H3, H2, H4r, Hg1, %W', %hW', HO⟩
  ihave H4' := (wb_join1 (F := F) d L _ _) $$ [H4a H4r]
  · isplitl [H4a] <;> iassumption
  have e8 : lo 8 = ![1024] := by unfold lo; rfl
  obtain rfl : o = ![1024] := ho_eq.trans e8
  have hin := hin_of d L g1 hT
  sl_exec_parts (disch := decide)
  -- odd block 1
  sl_for (inv1 d L fl qt tab O (insert (SemLoc.dma cc1_scratch7.sem, (default : HIx 1)) W') 1) $$ [Hmw Hg0 Ht H3 H1 H2 H4' Hg1 HO]
  case region => intro k _; exact pair1_region d L fl qt tab O _ T0 _ k
  · rw [inv1_flight (F := F) d L fl qt tab O _ 1 _ (Or.inl (by decide))]
    unfold invF
    isplitl [Hmw]; · iexact Hmw
    iexists _; iexists _; iexists _; iexists _; iexists ![1024]; iexists ho
    isplitr; rotate_left
    · isplitl [Hg0]; rotate_left
      · isplitl [H1]; · iexact H1
        isplitl [Ht]; · iexact Ht
        isplitl [H3]; · iexact H3
        isplitl [H2]; · iexact H2
        isplitl [H4']; · iexact H4'
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A1: the list's fifty words are not touched by the later stores
          intro i hi
          have hi0 := (mem_listM _ _ i).mp hi
          simp only [Matrix.cons_val_zero] at hi0
          exact (keep_word d L _ _ 0 (by rfl) i (by omega)).symm
    · ipureintro
      -- HOLE B1: the values at the loop's entry
      obtain ⟨hTh, hRh, hRowsh⟩ := even_to_odd d L fl tab 0 _ _ _ _ hV
      have_entry odd_entry
      refine key hfl hTh hRh hRowsh ?_ (by rfl) ?_ (by rfl) (by unfold lo1; rfl)
      ·
        refine View.forall_pieces_cons (fun x => step_trow (F := F) L fl _ 2 (by decide) (off5_blk L T0) _ 0 1008 inb_S2048_S1024_0 inb_S2048_S16_1008 _ (by decide) (by decide) _ _ x) ?_
        refine View.forall_pieces_cons (fun x => step_trow (F := F) L fl _ 2 (by decide) (off5_blk L T0) _ 0 992 inb_S2048_S1024_0 inb_S2048_S16_992 _ (by decide) (by decide) _ _ x) ?_
        refine View.forall_pieces_cons (fun x => step_trow (F := F) L fl _ 2 (by decide) (off5_blk L T0) _ 0 976 inb_S2048_S1024_0 inb_S2048_S16_976 _ (by decide) (by decide) _ _ x) ?_
        refine View.forall_pieces_cons (fun x => step_trow (F := F) L fl _ 2 (by decide) (off5_blk L T0) _ 0 960 inb_S2048_S1024_0 inb_S2048_S16_960 _ (by decide) (by decide) _ _ x) ?_
        refine View.forall_pieces_cons (fun x => step_trow (F := F) L fl _ 2 (by decide) (off5_blk L T0) _ 0 944 inb_S2048_S1024_0 inb_S2048_S16_944 _ (by decide) (by decide) _ _ x) ?_
        refine View.forall_pieces_cons (fun x => step_trow (F := F) L fl _ 2 (by decide) (off5_blk L T0) _ 0 928 inb_S2048_S1024_0 inb_S2048_S16_928 _ (by decide) (by decide) _ _ x) ?_
        refine View.forall_pieces_cons (fun x => step_trow (F := F) L fl _ 2 (by decide) (off5_blk L T0) _ 0 912 inb_S2048_S1024_0 inb_S2048_S16_912 _ (by decide) (by decide) _ _ x) ?_
        refine View.forall_pieces_cons (fun x => step_trow (F := F) L fl _ 2 (by decide) (off5_blk L T0) _ 0 896 inb_S2048_S1024_0 inb_S2048_S16_896 _ (by decide) (by decide) _ _ x) ?_
        refine View.forall_pieces_cons (fun x => step_trow (F := F) L fl _ 2 (by decide) (off5_blk L T0) _ 0 880 inb_S2048_S1024_0 inb_S2048_S16_880 _ (by decide) (by decide) _ _ x) ?_
        refine View.forall_pieces_cons (fun x => step_trow (F := F) L fl _ 2 (by decide) (off5_blk L T0) _ 0 864 inb_S2048_S1024_0 inb_S2048_S16_864 _ (by decide) (by decide) _ _ x) ?_
        refine View.forall_pieces_cons (fun x => step_trow (F := F) L fl _ 2 (by decide) (off5_blk L T0) _ 0 848 inb_S2048_S1024_0 inb_S2048_S16_848 _ (by decide) (by decide) _ _ x) ?_
        refine View.forall_pieces_cons (fun x => step_trow (F := F) L fl _ 2 (by decide) (off5_blk L T0) _ 0 832 inb_S2048_S1024_0 inb_S2048_S16_832 _ (by decide) (by decide) _ _ x) ?_
        refine View.forall_pieces_cons (fun x => step_trow (F := F) L fl _ 2 (by decide) (off5_blk L T0) _ 0 816 inb_S2048_S1024_0 inb_S2048_S16_816 _ (by decide) (by decide) _ _ x) ?_
        refine View.forall_pieces_cons (fun x => step_trow (F := F) L fl _ 2 (by decide) (off5_blk L T0) _ 0 800 inb_S2048_S1024_0 inb_S2048_S16_800 _ (by decide) (by decide) _ _ x) ?_
        refine View.forall_pieces_cons (fun x => step_trow (F := F) L fl _ 2 (by decide) (off5_blk L T0) _ 0 784 inb_S2048_S1024_0 inb_S2048_S16_784 _ (by decide) (by decide) _ _ x) ?_
        refine View.forall_pieces_cons (fun x => step_trow (F := F) L fl _ 2 (by decide) (off5_blk L T0) _ 0 768 inb_S2048_S1024_0 inb_S2048_S16_768 _ (by decide) (by decide) _ _ x) ?_
        refine View.forall_pieces_cons (fun x => step_trow (F := F) L fl _ 2 (by decide) (off5_blk L T0) _ 0 752 inb_S2048_S1024_0 inb_S2048_S16_752 _ (by decide) (by decide) _ _ x) ?_
        refine View.forall_pieces_cons (fun x => step_trow (F := F) L fl _ 2 (by decide) (off5_blk L T0) _ 0 736 inb_S2048_S1024_0 inb_S2048_S16_736 _ (by decide) (by decide) _ _ x) ?_
        refine View.forall_pieces_cons (fun x => step_trow (F := F) L fl _ 2 (by decide) (off5_blk L T0) _ 0 720 inb_S2048_S1024_0 inb_S2048_S16_720 _ (by decide) (by decide) _ _ x) ?_
        refine View.forall_pieces_cons (fun x => step_trow (F := F) L fl _ 2 (by decide) (off5_blk L T0) _ 0 704 inb_S2048_S1024_0 inb_S2048_S16_704 _ (by decide) (by decide) _ _ x) ?_
        refine View.forall_pieces_cons (fun x => step_trow (F := F) L fl _ 2 (by decide) (off5_blk L T0) _ 0 688 inb_S2048_S1024_0 inb_S2048_S16_688 _ (by decide) (by decide) _ _ x) ?_
        refine View.forall_pieces_cons (fun x => step_trow (F := F) L fl _ 2 (by decide) (off5_blk L T0) _ 0 672 inb_S2048_S1024_0 inb_S2048_S16_672 _ (by decide) (by decide) _ _ x) ?_
        refine View.forall_pieces_cons (fun x => step_trow (F := F) L fl _ 2 (by decide) (off5_blk L T0) _ 0 656 inb_S2048_S1024_0 inb_S2048_S16_656 _ (by decide) (by decide) _ _ x) ?_
        refine View.forall_pieces_cons (fun x => step_trow (F := F) L fl _ 2 (by decide) (off5_blk L T0) _ 0 640 inb_S2048_S1024_0 inb_S2048_S16_640 _ (by decide) (by decide) _ _ x) ?_
        refine View.forall_pieces_cons (fun x => step_trow (F := F) L fl _ 2 (by decide) (off5_blk L T0) _ 0 624 inb_S2048_S1024_0 inb_S2048_S16_624 _ (by decide) (by decide) _ _ x) ?_
        refine View.forall_pieces_cons (fun x => step_trow (F := F) L fl _ 2 (by decide) (off5_blk L T0) _ 0 608 inb_S2048_S1024_0 inb_S2048_S16_608 _ (by decide) (by decide) _ _ x) ?_
        refine View.forall_pieces_cons (fun x => step_trow (F := F) L fl _ 2 (by decide) (off5_blk L T0) _ 0 592 inb_S2048_S1024_0 inb_S2048_S16_592 _ (by decide) (by decide) _ _ x) ?_
        refine View.forall_pieces_cons (fun x => step_trow (F := F) L fl _ 2 (by decide) (off5_blk L T0) _ 0 576 inb_S2048_S1024_0 inb_S2048_S16_576 _ (by decide) (by decide) _ _ x) ?_
        refine View.forall_pieces_cons (fun x => step_trow (F := F) L fl _ 2 (by decide) (off5_blk L T0) _ 0 560 inb_S2048_S1024_0 inb_S2048_S16_560 _ (by decide) (by decide) _ _ x) ?_
        refine View.forall_pieces_cons (fun x => step_trow (F := F) L fl _ 2 (by decide) (off5_blk L T0) _ 0 544 inb_S2048_S1024_0 inb_S2048_S16_544 _ (by decide) (by decide) _ _ x) ?_
        refine View.forall_pieces_cons (fun x => step_trow (F := F) L fl _ 2 (by decide) (off5_blk L T0) _ 0 528 inb_S2048_S1024_0 inb_S2048_S16_528 _ (by decide) (by decide) _ _ x) ?_
        refine View.forall_pieces_cons (fun x => step_trow (F := F) L fl _ 2 (by decide) (off5_blk L T0) _ 0 512 inb_S2048_S1024_0 inb_S2048_S16_512 _ (by decide) (by decide) _ _ x) ?_
        refine View.forall_pieces_cons (fun x => step_trow (F := F) L fl _ 2 (by decide) (off5_blk L T0) _ 0 496 inb_S2048_S1024_0 inb_S2048_S16_496 _ (by decide) (by decide) _ _ x) ?_
        refine View.forall_pieces_cons (fun x => step_trow (F := F) L fl _ 2 (by decide) (off5_blk L T0) _ 0 480 inb_S2048_S1024_0 inb_S2048_S16_480 _ (by decide) (by decide) _ _ x) ?_
        refine View.forall_pieces_cons (fun x => step_trow (F := F) L fl _ 2 (by decide) (off5_blk L T0) _ 0 464 inb_S2048_S1024_0 inb_S2048_S16_464 _ (by decide) (by decide) _ _ x) ?_
        refine View.forall_pieces_cons (fun x => step_trow (F := F) L fl _ 2 (by decide) (off5_blk L T0) _ 0 448 inb_S2048_S1024_0 inb_S2048_S16_448 _ (by decide) (by decide) _ _ x) ?_
        refine View.forall_pieces_cons (fun x => step_trow (F := F) L fl _ 2 (by decide) (off5_blk L T0) _ 0 432 inb_S2048_S1024_0 inb_S2048_S16_432 _ (by decide) (by decide) _ _ x) ?_
        refine View.forall_pieces_cons (fun x => step_trow (F := F) L fl _ 2 (by decide) (off5_blk L T0) _ 0 416 inb_S2048_S1024_0 inb_S2048_S16_416 _ (by decide) (by decide) _ _ x) ?_
        refine View.forall_pieces_cons (fun x => step_trow (F := F) L fl _ 2 (by decide) (off5_blk L T0) _ 0 400 inb_S2048_S1024_0 inb_S2048_S16_400 _ (by decide) (by decide) _ _ x) ?_
        refine View.forall_pieces_cons (fun x => step_trow (F := F) L fl _ 2 (by decide) (off5_blk L T0) _ 0 384 inb_S2048_S1024_0 inb_S2048_S16_384 _ (by decide) (by decide) _ _ x) ?_
        refine View.forall_pieces_cons (fun x => step_trow (F := F) L fl _ 2 (by decide) (off5_blk L T0) _ 0 368 inb_S2048_S1024_0 inb_S2048_S16_368 _ (by decide) (by decide) _ _ x) ?_
        refine View.forall_pieces_cons (fun x => step_trow (F := F) L fl _ 2 (by decide) (off5_blk L T0) _ 0 352 inb_S2048_S1024_0 inb_S2048_S16_352 _ (by decide) (by decide) _ _ x) ?_
        refine View.forall_pieces_cons (fun x => step_trow (F := F) L fl _ 2 (by decide) (off5_blk L T0) _ 0 336 inb_S2048_S1024_0 inb_S2048_S16_336 _ (by decide) (by decide) _ _ x) ?_
        refine View.forall_pieces_cons (fun x => step_trow (F := F) L fl _ 2 (by decide) (off5_blk L T0) _ 0 320 inb_S2048_S1024_0 inb_S2048_S16_320 _ (by decide) (by decide) _ _ x) ?_
        refine View.forall_pieces_cons (fun x => step_trow (F := F) L fl _ 2 (by decide) (off5_blk L T0) _ 0 304 inb_S2048_S1024_0 inb_S2048_S16_304 _ (by decide) (by decide) _ _ x) ?_
        refine View.forall_pieces_cons (fun x => step_trow (F := F) L fl _ 2 (by decide) (off5_blk L T0) _ 0 288 inb_S2048_S1024_0 inb_S2048_S16_288 _ (by decide) (by decide) _ _ x) ?_
        refine View.forall_pieces_cons (fun x => step_trow (F := F) L fl _ 2 (by decide) (off5_blk L T0) _ 0 272 inb_S2048_S1024_0 inb_S2048_S16_272 _ (by decide) (by decide) _ _ x) ?_
        refine View.forall_pieces_cons (fun x => step_trow (F := F) L fl _ 2 (by decide) (off5_blk L T0) _ 0 256 inb_S2048_S1024_0 inb_S2048_S16_256 _ (by decide) (by decide) _ _ x) ?_
        refine View.forall_pieces_cons (fun x => step_trow (F := F) L fl _ 2 (by decide) (off5_blk L T0) _ 0 240 inb_S2048_S1024_0 inb_S2048_S16_240 _ (by decide) (by decide) _ _ x) ?_
        refine View.forall_pieces_cons (fun x => step_trow (F := F) L fl _ 2 (by decide) (off5_blk L T0) _ 0 224 inb_S2048_S1024_0 inb_S2048_S16_224 _ (by decide) (by decide) _ _ x) ?_
        refine View.forall_pieces_cons (fun x => step_trow (F := F) L fl _ 2 (by decide) (off5_blk L T0) _ 0 208 inb_S2048_S1024_0 inb_S2048_S16_208 _ (by decide) (by decide) _ _ x) ?_
        refine View.forall_pieces_cons (fun x => step_trow (F := F) L fl _ 2 (by decide) (off5_blk L T0) _ 0 192 inb_S2048_S1024_0 inb_S2048_S16_192 _ (by decide) (by decide) _ _ x) ?_
        refine View.forall_pieces_cons (fun x => step_trow (F := F) L fl _ 2 (by decide) (off5_blk L T0) _ 0 176 inb_S2048_S1024_0 inb_S2048_S16_176 _ (by decide) (by decide) _ _ x) ?_
        refine View.forall_pieces_cons (fun x => step_trow (F := F) L fl _ 2 (by decide) (off5_blk L T0) _ 0 160 inb_S2048_S1024_0 inb_S2048_S16_160 _ (by decide) (by decide) _ _ x) ?_
        refine View.forall_pieces_cons (fun x => step_trow (F := F) L fl _ 2 (by decide) (off5_blk L T0) _ 0 144 inb_S2048_S1024_0 inb_S2048_S16_144 _ (by decide) (by decide) _ _ x) ?_
        refine View.forall_pieces_cons (fun x => step_trow (F := F) L fl _ 2 (by decide) (off5_blk L T0) _ 0 128 inb_S2048_S1024_0 inb_S2048_S16_128 _ (by decide) (by decide) _ _ x) ?_
        refine View.forall_pieces_cons (fun x => step_trow (F := F) L fl _ 2 (by decide) (off5_blk L T0) _ 0 112 inb_S2048_S1024_0 inb_S2048_S16_112 _ (by decide) (by decide) _ _ x) ?_
        refine View.forall_pieces_cons (fun x => step_trow (F := F) L fl _ 2 (by decide) (off5_blk L T0) _ 0 96 inb_S2048_S1024_0 inb_S2048_S16_96 _ (by decide) (by decide) _ _ x) ?_
        refine View.forall_pieces_cons (fun x => step_trow (F := F) L fl _ 2 (by decide) (off5_blk L T0) _ 0 80 inb_S2048_S1024_0 inb_S2048_S16_80 _ (by decide) (by decide) _ _ x) ?_
        refine View.forall_pieces_cons (fun x => step_trow (F := F) L fl _ 2 (by decide) (off5_blk L T0) _ 0 64 inb_S2048_S1024_0 inb_S2048_S16_64 _ (by decide) (by decide) _ _ x) ?_
        refine View.forall_pieces_cons (fun x => step_trow (F := F) L fl _ 2 (by decide) (off5_blk L T0) _ 0 48 inb_S2048_S1024_0 inb_S2048_S16_48 _ (by decide) (by decide) _ _ x) ?_
        refine View.forall_pieces_cons (fun x => step_trow (F := F) L fl _ 2 (by decide) (off5_blk L T0) _ 0 32 inb_S2048_S1024_0 inb_S2048_S16_32 _ (by decide) (by decide) _ _ x) ?_
        refine View.forall_pieces_cons (fun x => step_trow (F := F) L fl _ 2 (by decide) (off5_blk L T0) _ 0 16 inb_S2048_S1024_0 inb_S2048_S16_16 _ (by decide) (by decide) _ _ x) ?_
        refine View.forall_pieces_cons (fun x => step_trow (F := F) L fl _ 2 (by decide) (off5_blk L T0) _ 0 0 inb_S2048_S1024_0 inb_S2048_S16_0 _ (by decide) (by decide) _ _ x) ?_
        exact View.forall_pieces_nil
      ·
        refine View.forall_pieces_cons (fun x => step_tcol (F := F) L fl _ 2 (by decide) (off5_blk L T0) _ 0 1008 inb_S2048_S1024_0 inb_S2048_S16_1008 _ (by decide) (by decide) _ _ x) ?_
        refine View.forall_pieces_cons (fun x => step_tcol (F := F) L fl _ 2 (by decide) (off5_blk L T0) _ 0 992 inb_S2048_S1024_0 inb_S2048_S16_992 _ (by decide) (by decide) _ _ x) ?_
        refine View.forall_pieces_cons (fun x => step_tcol (F := F) L fl _ 2 (by decide) (off5_blk L T0) _ 0 976 inb_S2048_S1024_0 inb_S2048_S16_976 _ (by decide) (by decide) _ _ x) ?_
        refine View.forall_pieces_cons (fun x => step_tcol (F := F) L fl _ 2 (by decide) (off5_blk L T0) _ 0 960 inb_S2048_S1024_0 inb_S2048_S16_960 _ (by decide) (by decide) _ _ x) ?_
        refine View.forall_pieces_cons (fun x => step_tcol (F := F) L fl _ 2 (by decide) (off5_blk L T0) _ 0 944 inb_S2048_S1024_0 inb_S2048_S16_944 _ (by decide) (by decide) _ _ x) ?_
        refine View.forall_pieces_cons (fun x => step_tcol (F := F) L fl _ 2 (by decide) (off5_blk L T0) _ 0 928 inb_S2048_S1024_0 inb_S2048_S16_928 _ (by decide) (by decide) _ _ x) ?_
        refine View.forall_pieces_cons (fun x => step_tcol (F := F) L fl _ 2 (by decide) (off5_blk L T0) _ 0 912 inb_S2048_S1024_0 inb_S2048_S16_912 _ (by decide) (by decide) _ _ x) ?_
        refine View.forall_pieces_cons (fun x => step_tcol (F := F) L fl _ 2 (by decide) (off5_blk L T0) _ 0 896 inb_S2048_S1024_0 inb_S2048_S16_896 _ (by decide) (by decide) _ _ x) ?_
        refine View.forall_pieces_cons (fun x => step_tcol (F := F) L fl _ 2 (by decide) (off5_blk L T0) _ 0 880 inb_S2048_S1024_0 inb_S2048_S16_880 _ (by decide) (by decide) _ _ x) ?_
        refine View.forall_pieces_cons (fun x => step_tcol (F := F) L fl _ 2 (by decide) (off5_blk L T0) _ 0 864 inb_S2048_S1024_0 inb_S2048_S16_864 _ (by decide) (by decide) _ _ x) ?_
        refine View.forall_pieces_cons (fun x => step_tcol (F := F) L fl _ 2 (by decide) (off5_blk L T0) _ 0 848 inb_S2048_S1024_0 inb_S2048_S16_848 _ (by decide) (by decide) _ _ x) ?_
        refine View.forall_pieces_cons (fun x => step_tcol (F := F) L fl _ 2 (by decide) (off5_blk L T0) _ 0 832 inb_S2048_S1024_0 inb_S2048_S16_832 _ (by decide) (by decide) _ _ x) ?_
        refine View.forall_pieces_cons (fun x => step_tcol (F := F) L fl _ 2 (by decide) (off5_blk L T0) _ 0 816 inb_S2048_S1024_0 inb_S2048_S16_816 _ (by decide) (by decide) _ _ x) ?_
        refine View.forall_pieces_cons (fun x => step_tcol (F := F) L fl _ 2 (by decide) (off5_blk L T0) _ 0 800 inb_S2048_S1024_0 inb_S2048_S16_800 _ (by decide) (by decide) _ _ x) ?_
        refine View.forall_pieces_cons (fun x => step_tcol (F := F) L fl _ 2 (by decide) (off5_blk L T0) _ 0 784 inb_S2048_S1024_0 inb_S2048_S16_784 _ (by decide) (by decide) _ _ x) ?_
        refine View.forall_pieces_cons (fun x => step_tcol (F := F) L fl _ 2 (by decide) (off5_blk L T0) _ 0 768 inb_S2048_S1024_0 inb_S2048_S16_768 _ (by decide) (by decide) _ _ x) ?_
        refine View.forall_pieces_cons (fun x => step_tcol (F := F) L fl _ 2 (by decide) (off5_blk L T0) _ 0 752 inb_S2048_S1024_0 inb_S2048_S16_752 _ (by decide) (by decide) _ _ x) ?_
        refine View.forall_pieces_cons (fun x => step_tcol (F := F) L fl _ 2 (by decide) (off5_blk L T0) _ 0 736 inb_S2048_S1024_0 inb_S2048_S16_736 _ (by decide) (by decide) _ _ x) ?_
        refine View.forall_pieces_cons (fun x => step_tcol (F := F) L fl _ 2 (by decide) (off5_blk L T0) _ 0 720 inb_S2048_S1024_0 inb_S2048_S16_720 _ (by decide) (by decide) _ _ x) ?_
        refine View.forall_pieces_cons (fun x => step_tcol (F := F) L fl _ 2 (by decide) (off5_blk L T0) _ 0 704 inb_S2048_S1024_0 inb_S2048_S16_704 _ (by decide) (by decide) _ _ x) ?_
        refine View.forall_pieces_cons (fun x => step_tcol (F := F) L fl _ 2 (by decide) (off5_blk L T0) _ 0 688 inb_S2048_S1024_0 inb_S2048_S16_688 _ (by decide) (by decide) _ _ x) ?_
        refine View.forall_pieces_cons (fun x => step_tcol (F := F) L fl _ 2 (by decide) (off5_blk L T0) _ 0 672 inb_S2048_S1024_0 inb_S2048_S16_672 _ (by decide) (by decide) _ _ x) ?_
        refine View.forall_pieces_cons (fun x => step_tcol (F := F) L fl _ 2 (by decide) (off5_blk L T0) _ 0 656 inb_S2048_S1024_0 inb_S2048_S16_656 _ (by decide) (by decide) _ _ x) ?_
        refine View.forall_pieces_cons (fun x => step_tcol (F := F) L fl _ 2 (by decide) (off5_blk L T0) _ 0 640 inb_S2048_S1024_0 inb_S2048_S16_640 _ (by decide) (by decide) _ _ x) ?_
        refine View.forall_pieces_cons (fun x => step_tcol (F := F) L fl _ 2 (by decide) (off5_blk L T0) _ 0 624 inb_S2048_S1024_0 inb_S2048_S16_624 _ (by decide) (by decide) _ _ x) ?_
        refine View.forall_pieces_cons (fun x => step_tcol (F := F) L fl _ 2 (by decide) (off5_blk L T0) _ 0 608 inb_S2048_S1024_0 inb_S2048_S16_608 _ (by decide) (by decide) _ _ x) ?_
        refine View.forall_pieces_cons (fun x => step_tcol (F := F) L fl _ 2 (by decide) (off5_blk L T0) _ 0 592 inb_S2048_S1024_0 inb_S2048_S16_592 _ (by decide) (by decide) _ _ x) ?_
        refine View.forall_pieces_cons (fun x => step_tcol (F := F) L fl _ 2 (by decide) (off5_blk L T0) _ 0 576 inb_S2048_S1024_0 inb_S2048_S16_576 _ (by decide) (by decide) _ _ x) ?_
        refine View.forall_pieces_cons (fun x => step_tcol (F := F) L fl _ 2 (by decide) (off5_blk L T0) _ 0 560 inb_S2048_S1024_0 inb_S2048_S16_560 _ (by decide) (by decide) _ _ x) ?_
        refine View.forall_pieces_cons (fun x => step_tcol (F := F) L fl _ 2 (by decide) (off5_blk L T0) _ 0 544 inb_S2048_S1024_0 inb_S2048_S16_544 _ (by decide) (by decide) _ _ x) ?_
        refine View.forall_pieces_cons (fun x => step_tcol (F := F) L fl _ 2 (by decide) (off5_blk L T0) _ 0 528 inb_S2048_S1024_0 inb_S2048_S16_528 _ (by decide) (by decide) _ _ x) ?_
        refine View.forall_pieces_cons (fun x => step_tcol (F := F) L fl _ 2 (by decide) (off5_blk L T0) _ 0 512 inb_S2048_S1024_0 inb_S2048_S16_512 _ (by decide) (by decide) _ _ x) ?_
        refine View.forall_pieces_cons (fun x => step_tcol (F := F) L fl _ 2 (by decide) (off5_blk L T0) _ 0 496 inb_S2048_S1024_0 inb_S2048_S16_496 _ (by decide) (by decide) _ _ x) ?_
        refine View.forall_pieces_cons (fun x => step_tcol (F := F) L fl _ 2 (by decide) (off5_blk L T0) _ 0 480 inb_S2048_S1024_0 inb_S2048_S16_480 _ (by decide) (by decide) _ _ x) ?_
        refine View.forall_pieces_cons (fun x => step_tcol (F := F) L fl _ 2 (by decide) (off5_blk L T0) _ 0 464 inb_S2048_S1024_0 inb_S2048_S16_464 _ (by decide) (by decide) _ _ x) ?_
        refine View.forall_pieces_cons (fun x => step_tcol (F := F) L fl _ 2 (by decide) (off5_blk L T0) _ 0 448 inb_S2048_S1024_0 inb_S2048_S16_448 _ (by decide) (by decide) _ _ x) ?_
        refine View.forall_pieces_cons (fun x => step_tcol (F := F) L fl _ 2 (by decide) (off5_blk L T0) _ 0 432 inb_S2048_S1024_0 inb_S2048_S16_432 _ (by decide) (by decide) _ _ x) ?_
        refine View.forall_pieces_cons (fun x => step_tcol (F := F) L fl _ 2 (by decide) (off5_blk L T0) _ 0 416 inb_S2048_S1024_0 inb_S2048_S16_416 _ (by decide) (by decide) _ _ x) ?_
        refine View.forall_pieces_cons (fun x => step_tcol (F := F) L fl _ 2 (by decide) (off5_blk L T0) _ 0 400 inb_S2048_S1024_0 inb_S2048_S16_400 _ (by decide) (by decide) _ _ x) ?_
        refine View.forall_pieces_cons (fun x => step_tcol (F := F) L fl _ 2 (by decide) (off5_blk L T0) _ 0 384 inb_S2048_S1024_0 inb_S2048_S16_384 _ (by decide) (by decide) _ _ x) ?_
        refine View.forall_pieces_cons (fun x => step_tcol (F := F) L fl _ 2 (by decide) (off5_blk L T0) _ 0 368 inb_S2048_S1024_0 inb_S2048_S16_368 _ (by decide) (by decide) _ _ x) ?_
        refine View.forall_pieces_cons (fun x => step_tcol (F := F) L fl _ 2 (by decide) (off5_blk L T0) _ 0 352 inb_S2048_S1024_0 inb_S2048_S16_352 _ (by decide) (by decide) _ _ x) ?_
        refine View.forall_pieces_cons (fun x => step_tcol (F := F) L fl _ 2 (by decide) (off5_blk L T0) _ 0 336 inb_S2048_S1024_0 inb_S2048_S16_336 _ (by decide) (by decide) _ _ x) ?_
        refine View.forall_pieces_cons (fun x => step_tcol (F := F) L fl _ 2 (by decide) (off5_blk L T0) _ 0 320 inb_S2048_S1024_0 inb_S2048_S16_320 _ (by decide) (by decide) _ _ x) ?_
        refine View.forall_pieces_cons (fun x => step_tcol (F := F) L fl _ 2 (by decide) (off5_blk L T0) _ 0 304 inb_S2048_S1024_0 inb_S2048_S16_304 _ (by decide) (by decide) _ _ x) ?_
        refine View.forall_pieces_cons (fun x => step_tcol (F := F) L fl _ 2 (by decide) (off5_blk L T0) _ 0 288 inb_S2048_S1024_0 inb_S2048_S16_288 _ (by decide) (by decide) _ _ x) ?_
        refine View.forall_pieces_cons (fun x => step_tcol (F := F) L fl _ 2 (by decide) (off5_blk L T0) _ 0 272 inb_S2048_S1024_0 inb_S2048_S16_272 _ (by decide) (by decide) _ _ x) ?_
        refine View.forall_pieces_cons (fun x => step_tcol (F := F) L fl _ 2 (by decide) (off5_blk L T0) _ 0 256 inb_S2048_S1024_0 inb_S2048_S16_256 _ (by decide) (by decide) _ _ x) ?_
        refine View.forall_pieces_cons (fun x => step_tcol (F := F) L fl _ 2 (by decide) (off5_blk L T0) _ 0 240 inb_S2048_S1024_0 inb_S2048_S16_240 _ (by decide) (by decide) _ _ x) ?_
        refine View.forall_pieces_cons (fun x => step_tcol (F := F) L fl _ 2 (by decide) (off5_blk L T0) _ 0 224 inb_S2048_S1024_0 inb_S2048_S16_224 _ (by decide) (by decide) _ _ x) ?_
        refine View.forall_pieces_cons (fun x => step_tcol (F := F) L fl _ 2 (by decide) (off5_blk L T0) _ 0 208 inb_S2048_S1024_0 inb_S2048_S16_208 _ (by decide) (by decide) _ _ x) ?_
        refine View.forall_pieces_cons (fun x => step_tcol (F := F) L fl _ 2 (by decide) (off5_blk L T0) _ 0 192 inb_S2048_S1024_0 inb_S2048_S16_192 _ (by decide) (by decide) _ _ x) ?_
        refine View.forall_pieces_cons (fun x => step_tcol (F := F) L fl _ 2 (by decide) (off5_blk L T0) _ 0 176 inb_S2048_S1024_0 inb_S2048_S16_176 _ (by decide) (by decide) _ _ x) ?_
        refine View.forall_pieces_cons (fun x => step_tcol (F := F) L fl _ 2 (by decide) (off5_blk L T0) _ 0 160 inb_S2048_S1024_0 inb_S2048_S16_160 _ (by decide) (by decide) _ _ x) ?_
        refine View.forall_pieces_cons (fun x => step_tcol (F := F) L fl _ 2 (by decide) (off5_blk L T0) _ 0 144 inb_S2048_S1024_0 inb_S2048_S16_144 _ (by decide) (by decide) _ _ x) ?_
        refine View.forall_pieces_cons (fun x => step_tcol (F := F) L fl _ 2 (by decide) (off5_blk L T0) _ 0 128 inb_S2048_S1024_0 inb_S2048_S16_128 _ (by decide) (by decide) _ _ x) ?_
        refine View.forall_pieces_cons (fun x => step_tcol (F := F) L fl _ 2 (by decide) (off5_blk L T0) _ 0 112 inb_S2048_S1024_0 inb_S2048_S16_112 _ (by decide) (by decide) _ _ x) ?_
        refine View.forall_pieces_cons (fun x => step_tcol (F := F) L fl _ 2 (by decide) (off5_blk L T0) _ 0 96 inb_S2048_S1024_0 inb_S2048_S16_96 _ (by decide) (by decide) _ _ x) ?_
        refine View.forall_pieces_cons (fun x => step_tcol (F := F) L fl _ 2 (by decide) (off5_blk L T0) _ 0 80 inb_S2048_S1024_0 inb_S2048_S16_80 _ (by decide) (by decide) _ _ x) ?_
        refine View.forall_pieces_cons (fun x => step_tcol (F := F) L fl _ 2 (by decide) (off5_blk L T0) _ 0 64 inb_S2048_S1024_0 inb_S2048_S16_64 _ (by decide) (by decide) _ _ x) ?_
        refine View.forall_pieces_cons (fun x => step_tcol (F := F) L fl _ 2 (by decide) (off5_blk L T0) _ 0 48 inb_S2048_S1024_0 inb_S2048_S16_48 _ (by decide) (by decide) _ _ x) ?_
        refine View.forall_pieces_cons (fun x => step_tcol (F := F) L fl _ 2 (by decide) (off5_blk L T0) _ 0 32 inb_S2048_S1024_0 inb_S2048_S16_32 _ (by decide) (by decide) _ _ x) ?_
        refine View.forall_pieces_cons (fun x => step_tcol (F := F) L fl _ 2 (by decide) (off5_blk L T0) _ 0 16 inb_S2048_S1024_0 inb_S2048_S16_16 _ (by decide) (by decide) _ _ x) ?_
        refine View.forall_pieces_cons (fun x => step_tcol (F := F) L fl _ 2 (by decide) (off5_blk L T0) _ 0 0 inb_S2048_S1024_0 inb_S2048_S16_0 _ (by decide) (by decide) _ _ x) ?_
        exact View.forall_pieces_nil
  rw [inv1_flight (F := F) d L fl qt tab O _ 1 _ (Or.inr (by decide))]
  iintro %_ HI
  unfold invF
  icases HI with ⟨-, %r1, %g11, %g21, %wb1, %o1, %ho1, ⟨%hT1, %hR1, %ho1_eq, %hV1⟩, Hg0, H1, Ht, H3, H2, H4r, Hg1, %W1, %hW1, HO⟩
  have e81 : lo1 8 = ![0] := by unfold lo1; rfl
  obtain rfl : o1 = ![0] := ho1_eq.trans e81
  have hin1 := hin_of d L g11 hT1
  sl_exec_parts (disch := decide)
  -- even block 2
  ihave H4j := (wb_join_a (F := F) d L _ _) $$ [H4' H4r]
  · isplitl [H4'] <;> iassumption
  sl_for (inv0 d L fl qt tab O (insert (SemLoc.dma cc1_scratch8.sem, (default : HIx 1)) (insert (SemLoc.dma cc1_scratch9.sem, (default : HIx 1)) W1)) 2) $$ [Hmw Hg0 Ht H3 H1 H2 H4j Hg1 HO]
  case region => intro k _; exact pair0_region d L fl qt tab O _ 0#32 0#32 T1 _ k
  ·
    unfold inv0
    isplitl [Hmw]; · iexact Hmw
    iexists _; iexists _; iexists _; iexists _; iexists ![0]; iexists ho1
    isplitr; rotate_left
    · isplitl [Hg0]; rotate_left
      · isplitl [H1]; · iexact H1
        isplitl [Ht]; · iexact Ht
        isplitl [H3]; · iexact H3
        isplitl [H2]; · iexact H2
        isplitl [H4j]; · iexact H4j
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A2: the list's fifty words are not touched by the later stores
          intro i hi
          have hi0 := (mem_listM _ _ i).mp hi
          simp only [Matrix.cons_val_zero] at hi0
          exact (keep_word d L _ _ 1024 (by rfl) i (by omega)).symm
    · ipureintro
      -- HOLE B2: the values at the loop's entry
      obtain ⟨hTh, hRh, hRowsh⟩ := odd_to_even d L fl tab 1 (by decide) _ _ _ _ hV1
      have_entry even_entry
      refine key hfl hTh hRh hRowsh ?_ (by rfl) ?_ (by rfl) (by unfold lo; rfl)
      ·
        refine View.forall_pieces_cons (fun x => step_trow (F := F) L fl _ 3 (by decide) (off62_blk L T0) _ 1024 2032 inb_S2048_S1024_1024 inb_S2048_S16_2032 _ (by decide) (by decide) _ _ x) ?_
        refine View.forall_pieces_cons (fun x => step_trow (F := F) L fl _ 3 (by decide) (off62_blk L T0) _ 1024 2016 inb_S2048_S1024_1024 inb_S2048_S16_2016 _ (by decide) (by decide) _ _ x) ?_
        refine View.forall_pieces_cons (fun x => step_trow (F := F) L fl _ 3 (by decide) (off62_blk L T0) _ 1024 2000 inb_S2048_S1024_1024 inb_S2048_S16_2000 _ (by decide) (by decide) _ _ x) ?_
        refine View.forall_pieces_cons (fun x => step_trow (F := F) L fl _ 3 (by decide) (off62_blk L T0) _ 1024 1984 inb_S2048_S1024_1024 inb_S2048_S16_1984 _ (by decide) (by decide) _ _ x) ?_
        refine View.forall_pieces_cons (fun x => step_trow (F := F) L fl _ 3 (by decide) (off62_blk L T0) _ 1024 1968 inb_S2048_S1024_1024 inb_S2048_S16_1968 _ (by decide) (by decide) _ _ x) ?_
        refine View.forall_pieces_cons (fun x => step_trow (F := F) L fl _ 3 (by decide) (off62_blk L T0) _ 1024 1952 inb_S2048_S1024_1024 inb_S2048_S16_1952 _ (by decide) (by decide) _ _ x) ?_
        refine View.forall_pieces_cons (fun x => step_trow (F := F) L fl _ 3 (by decide) (off62_blk L T0) _ 1024 1936 inb_S2048_S1024_1024 inb_S2048_S16_1936 _ (by decide) (by decide) _ _ x) ?_
        refine View.forall_pieces_cons (fun x => step_trow (F := F) L fl _ 3 (by decide) (off62_blk L T0) _ 1024 1920 inb_S2048_S1024_1024 inb_S2048_S16_1920 _ (by decide) (by decide) _ _ x) ?_
        refine View.forall_pieces_cons (fun x => step_trow (F := F) L fl _ 3 (by decide) (off62_blk L T0) _ 1024 1904 inb_S2048_S1024_1024 inb_S2048_S16_1904 _ (by decide) (by decide) _ _ x) ?_
        refine View.forall_pieces_cons (fun x => step_trow (F := F) L fl _ 3 (by decide) (off62_blk L T0) _ 1024 1888 inb_S2048_S1024_1024 inb_S2048_S16_1888 _ (by decide) (by decide) _ _ x) ?_
        refine View.forall_pieces_cons (fun x => step_trow (F := F) L fl _ 3 (by decide) (off62_blk L T0) _ 1024 1872 inb_S2048_S1024_1024 inb_S2048_S16_1872 _ (by decide) (by decide) _ _ x) ?_
        refine View.forall_pieces_cons (fun x => step_trow (F := F) L fl _ 3 (by decide) (off62_blk L T0) _ 1024 1856 inb_S2048_S1024_1024 inb_S2048_S16_1856 _ (by decide) (by decide) _ _ x) ?_
        refine View.forall_pieces_cons (fun x => step_trow (F := F) L fl _ 3 (by decide) (off62_blk L T0) _ 1024 1840 inb_S2048_S1024_1024 inb_S2048_S16_1840 _ (by decide) (by decide) _ _ x) ?_
        refine View.forall_pieces_cons (fun x => step_trow (F := F) L fl _ 3 (by decide) (off62_blk L T0) _ 1024 1824 inb_S2048_S1024_1024 inb_S2048_S16_1824 _ (by decide) (by decide) _ _ x) ?_
        refine View.forall_pieces_cons (fun x => step_trow (F := F) L fl _ 3 (by decide) (off62_blk L T0) _ 1024 1808 inb_S2048_S1024_1024 inb_S2048_S16_1808 _ (by decide) (by decide) _ _ x) ?_
        refine View.forall_pieces_cons (fun x => step_trow (F := F) L fl _ 3 (by decide) (off62_blk L T0) _ 1024 1792 inb_S2048_S1024_1024 inb_S2048_S16_1792 _ (by decide) (by decide) _ _ x) ?_
        refine View.forall_pieces_cons (fun x => step_trow (F := F) L fl _ 3 (by decide) (off62_blk L T0) _ 1024 1776 inb_S2048_S1024_1024 inb_S2048_S16_1776 _ (by decide) (by decide) _ _ x) ?_
        refine View.forall_pieces_cons (fun x => step_trow (F := F) L fl _ 3 (by decide) (off62_blk L T0) _ 1024 1760 inb_S2048_S1024_1024 inb_S2048_S16_1760 _ (by decide) (by decide) _ _ x) ?_
        refine View.forall_pieces_cons (fun x => step_trow (F := F) L fl _ 3 (by decide) (off62_blk L T0) _ 1024 1744 inb_S2048_S1024_1024 inb_S2048_S16_1744 _ (by decide) (by decide) _ _ x) ?_
        refine View.forall_pieces_cons (fun x => step_trow (F := F) L fl _ 3 (by decide) (off62_blk L T0) _ 1024 1728 inb_S2048_S1024_1024 inb_S2048_S16_1728 _ (by decide) (by decide) _ _ x) ?_
        refine View.forall_pieces_cons (fun x => step_trow (F := F) L fl _ 3 (by decide) (off62_blk L T0) _ 1024 1712 inb_S2048_S1024_1024 inb_S2048_S16_1712 _ (by decide) (by decide) _ _ x) ?_
        refine View.forall_pieces_cons (fun x => step_trow (F := F) L fl _ 3 (by decide) (off62_blk L T0) _ 1024 1696 inb_S2048_S1024_1024 inb_S2048_S16_1696 _ (by decide) (by decide) _ _ x) ?_
        refine View.forall_pieces_cons (fun x => step_trow (F := F) L fl _ 3 (by decide) (off62_blk L T0) _ 1024 1680 inb_S2048_S1024_1024 inb_S2048_S16_1680 _ (by decide) (by decide) _ _ x) ?_
        refine View.forall_pieces_cons (fun x => step_trow (F := F) L fl _ 3 (by decide) (off62_blk L T0) _ 1024 1664 inb_S2048_S1024_1024 inb_S2048_S16_1664 _ (by decide) (by decide) _ _ x) ?_
        refine View.forall_pieces_cons (fun x => step_trow (F := F) L fl _ 3 (by decide) (off62_blk L T0) _ 1024 1648 inb_S2048_S1024_1024 inb_S2048_S16_1648 _ (by decide) (by decide) _ _ x) ?_
        refine View.forall_pieces_cons (fun x => step_trow (F := F) L fl _ 3 (by decide) (off62_blk L T0) _ 1024 1632 inb_S2048_S1024_1024 inb_S2048_S16_1632 _ (by decide) (by decide) _ _ x) ?_
        refine View.forall_pieces_cons (fun x => step_trow (F := F) L fl _ 3 (by decide) (off62_blk L T0) _ 1024 1616 inb_S2048_S1024_1024 inb_S2048_S16_1616 _ (by decide) (by decide) _ _ x) ?_
        refine View.forall_pieces_cons (fun x => step_trow (F := F) L fl _ 3 (by decide) (off62_blk L T0) _ 1024 1600 inb_S2048_S1024_1024 inb_S2048_S16_1600 _ (by decide) (by decide) _ _ x) ?_
        refine View.forall_pieces_cons (fun x => step_trow (F := F) L fl _ 3 (by decide) (off62_blk L T0) _ 1024 1584 inb_S2048_S1024_1024 inb_S2048_S16_1584 _ (by decide) (by decide) _ _ x) ?_
        refine View.forall_pieces_cons (fun x => step_trow (F := F) L fl _ 3 (by decide) (off62_blk L T0) _ 1024 1568 inb_S2048_S1024_1024 inb_S2048_S16_1568 _ (by decide) (by decide) _ _ x) ?_
        refine View.forall_pieces_cons (fun x => step_trow (F := F) L fl _ 3 (by decide) (off62_blk L T0) _ 1024 1552 inb_S2048_S1024_1024 inb_S2048_S16_1552 _ (by decide) (by decide) _ _ x) ?_
        refine View.forall_pieces_cons (fun x => step_trow (F := F) L fl _ 3 (by decide) (off62_blk L T0) _ 1024 1536 inb_S2048_S1024_1024 inb_S2048_S16_1536 _ (by decide) (by decide) _ _ x) ?_
        refine View.forall_pieces_cons (fun x => step_trow (F := F) L fl _ 3 (by decide) (off62_blk L T0) _ 1024 1520 inb_S2048_S1024_1024 inb_S2048_S16_1520 _ (by decide) (by decide) _ _ x) ?_
        refine View.forall_pieces_cons (fun x => step_trow (F := F) L fl _ 3 (by decide) (off62_blk L T0) _ 1024 1504 inb_S2048_S1024_1024 inb_S2048_S16_1504 _ (by decide) (by decide) _ _ x) ?_
        refine View.forall_pieces_cons (fun x => step_trow (F := F) L fl _ 3 (by decide) (off62_blk L T0) _ 1024 1488 inb_S2048_S1024_1024 inb_S2048_S16_1488 _ (by decide) (by decide) _ _ x) ?_
        refine View.forall_pieces_cons (fun x => step_trow (F := F) L fl _ 3 (by decide) (off62_blk L T0) _ 1024 1472 inb_S2048_S1024_1024 inb_S2048_S16_1472 _ (by decide) (by decide) _ _ x) ?_
        refine View.forall_pieces_cons (fun x => step_trow (F := F) L fl _ 3 (by decide) (off62_blk L T0) _ 1024 1456 inb_S2048_S1024_1024 inb_S2048_S16_1456 _ (by decide) (by decide) _ _ x) ?_
        refine View.forall_pieces_cons (fun x => step_trow (F := F) L fl _ 3 (by decide) (off62_blk L T0) _ 1024 1440 inb_S2048_S1024_1024 inb_S2048_S16_1440 _ (by decide) (by decide) _ _ x) ?_
        refine View.forall_pieces_cons (fun x => step_trow (F := F) L fl _ 3 (by decide) (off62_blk L T0) _ 1024 1424 inb_S2048_S1024_1024 inb_S2048_S16_1424 _ (by decide) (by decide) _ _ x) ?_
        refine View.forall_pieces_cons (fun x => step_trow (F := F) L fl _ 3 (by decide) (off62_blk L T0) _ 1024 1408 inb_S2048_S1024_1024 inb_S2048_S16_1408 _ (by decide) (by decide) _ _ x) ?_
        refine View.forall_pieces_cons (fun x => step_trow (F := F) L fl _ 3 (by decide) (off62_blk L T0) _ 1024 1392 inb_S2048_S1024_1024 inb_S2048_S16_1392 _ (by decide) (by decide) _ _ x) ?_
        refine View.forall_pieces_cons (fun x => step_trow (F := F) L fl _ 3 (by decide) (off62_blk L T0) _ 1024 1376 inb_S2048_S1024_1024 inb_S2048_S16_1376 _ (by decide) (by decide) _ _ x) ?_
        refine View.forall_pieces_cons (fun x => step_trow (F := F) L fl _ 3 (by decide) (off62_blk L T0) _ 1024 1360 inb_S2048_S1024_1024 inb_S2048_S16_1360 _ (by decide) (by decide) _ _ x) ?_
        refine View.forall_pieces_cons (fun x => step_trow (F := F) L fl _ 3 (by decide) (off62_blk L T0) _ 1024 1344 inb_S2048_S1024_1024 inb_S2048_S16_1344 _ (by decide) (by decide) _ _ x) ?_
        refine View.forall_pieces_cons (fun x => step_trow (F := F) L fl _ 3 (by decide) (off62_blk L T0) _ 1024 1328 inb_S2048_S1024_1024 inb_S2048_S16_1328 _ (by decide) (by decide) _ _ x) ?_
        refine View.forall_pieces_cons (fun x => step_trow (F := F) L fl _ 3 (by decide) (off62_blk L T0) _ 1024 1312 inb_S2048_S1024_1024 inb_S2048_S16_1312 _ (by decide) (by decide) _ _ x) ?_
        refine View.forall_pieces_cons (fun x => step_trow (F := F) L fl _ 3 (by decide) (off62_blk L T0) _ 1024 1296 inb_S2048_S1024_1024 inb_S2048_S16_1296 _ (by decide) (by decide) _ _ x) ?_
        refine View.forall_pieces_cons (fun x => step_trow (F := F) L fl _ 3 (by decide) (off62_blk L T0) _ 1024 1280 inb_S2048_S1024_1024 inb_S2048_S16_1280 _ (by decide) (by decide) _ _ x) ?_
        refine View.forall_pieces_cons (fun x => step_trow (F := F) L fl _ 3 (by decide) (off62_blk L T0) _ 1024 1264 inb_S2048_S1024_1024 inb_S2048_S16_1264 _ (by decide) (by decide) _ _ x) ?_
        refine View.forall_pieces_cons (fun x => step_trow (F := F) L fl _ 3 (by decide) (off62_blk L T0) _ 1024 1248 inb_S2048_S1024_1024 inb_S2048_S16_1248 _ (by decide) (by decide) _ _ x) ?_
        refine View.forall_pieces_cons (fun x => step_trow (F := F) L fl _ 3 (by decide) (off62_blk L T0) _ 1024 1232 inb_S2048_S1024_1024 inb_S2048_S16_1232 _ (by decide) (by decide) _ _ x) ?_
        refine View.forall_pieces_cons (fun x => step_trow (F := F) L fl _ 3 (by decide) (off62_blk L T0) _ 1024 1216 inb_S2048_S1024_1024 inb_S2048_S16_1216 _ (by decide) (by decide) _ _ x) ?_
        refine View.forall_pieces_cons (fun x => step_trow (F := F) L fl _ 3 (by decide) (off62_blk L T0) _ 1024 1200 inb_S2048_S1024_1024 inb_S2048_S16_1200 _ (by decide) (by decide) _ _ x) ?_
        refine View.forall_pieces_cons (fun x => step_trow (F := F) L fl _ 3 (by decide) (off62_blk L T0) _ 1024 1184 inb_S2048_S1024_1024 inb_S2048_S16_1184 _ (by decide) (by decide) _ _ x) ?_
        refine View.forall_pieces_cons (fun x => step_trow (F := F) L fl _ 3 (by decide) (off62_blk L T0) _ 1024 1168 inb_S2048_S1024_1024 inb_S2048_S16_1168 _ (by decide) (by decide) _ _ x) ?_
        refine View.forall_pieces_cons (fun x => step_trow (F := F) L fl _ 3 (by decide) (off62_blk L T0) _ 1024 1152 inb_S2048_S1024_1024 inb_S2048_S16_1152 _ (by decide) (by decide) _ _ x) ?_
        refine View.forall_pieces_cons (fun x => step_trow (F := F) L fl _ 3 (by decide) (off62_blk L T0) _ 1024 1136 inb_S2048_S1024_1024 inb_S2048_S16_1136 _ (by decide) (by decide) _ _ x) ?_
        refine View.forall_pieces_cons (fun x => step_trow (F := F) L fl _ 3 (by decide) (off62_blk L T0) _ 1024 1120 inb_S2048_S1024_1024 inb_S2048_S16_1120 _ (by decide) (by decide) _ _ x) ?_
        refine View.forall_pieces_cons (fun x => step_trow (F := F) L fl _ 3 (by decide) (off62_blk L T0) _ 1024 1104 inb_S2048_S1024_1024 inb_S2048_S16_1104 _ (by decide) (by decide) _ _ x) ?_
        refine View.forall_pieces_cons (fun x => step_trow (F := F) L fl _ 3 (by decide) (off62_blk L T0) _ 1024 1088 inb_S2048_S1024_1024 inb_S2048_S16_1088 _ (by decide) (by decide) _ _ x) ?_
        refine View.forall_pieces_cons (fun x => step_trow (F := F) L fl _ 3 (by decide) (off62_blk L T0) _ 1024 1072 inb_S2048_S1024_1024 inb_S2048_S16_1072 _ (by decide) (by decide) _ _ x) ?_
        refine View.forall_pieces_cons (fun x => step_trow (F := F) L fl _ 3 (by decide) (off62_blk L T0) _ 1024 1056 inb_S2048_S1024_1024 inb_S2048_S16_1056 _ (by decide) (by decide) _ _ x) ?_
        refine View.forall_pieces_cons (fun x => step_trow (F := F) L fl _ 3 (by decide) (off62_blk L T0) _ 1024 1040 inb_S2048_S1024_1024 inb_S2048_S16_1040 _ (by decide) (by decide) _ _ x) ?_
        refine View.forall_pieces_cons (fun x => step_trow (F := F) L fl _ 3 (by decide) (off62_blk L T0) _ 1024 1024 inb_S2048_S1024_1024 inb_S2048_S16_1024 _ (by decide) (by decide) _ _ x) ?_
        exact View.forall_pieces_nil
      ·
        refine View.forall_pieces_cons (fun x => step_tcol (F := F) L fl _ 3 (by decide) (off62_blk L T0) _ 1024 2032 inb_S2048_S1024_1024 inb_S2048_S16_2032 _ (by decide) (by decide) _ _ x) ?_
        refine View.forall_pieces_cons (fun x => step_tcol (F := F) L fl _ 3 (by decide) (off62_blk L T0) _ 1024 2016 inb_S2048_S1024_1024 inb_S2048_S16_2016 _ (by decide) (by decide) _ _ x) ?_
        refine View.forall_pieces_cons (fun x => step_tcol (F := F) L fl _ 3 (by decide) (off62_blk L T0) _ 1024 2000 inb_S2048_S1024_1024 inb_S2048_S16_2000 _ (by decide) (by decide) _ _ x) ?_
        refine View.forall_pieces_cons (fun x => step_tcol (F := F) L fl _ 3 (by decide) (off62_blk L T0) _ 1024 1984 inb_S2048_S1024_1024 inb_S2048_S16_1984 _ (by decide) (by decide) _ _ x) ?_
        refine View.forall_pieces_cons (fun x => step_tcol (F := F) L fl _ 3 (by decide) (off62_blk L T0) _ 1024 1968 inb_S2048_S1024_1024 inb_S2048_S16_1968 _ (by decide) (by decide) _ _ x) ?_
        refine View.forall_pieces_cons (fun x => step_tcol (F := F) L fl _ 3 (by decide) (off62_blk L T0) _ 1024 1952 inb_S2048_S1024_1024 inb_S2048_S16_1952 _ (by decide) (by decide) _ _ x) ?_
        refine View.forall_pieces_cons (fun x => step_tcol (F := F) L fl _ 3 (by decide) (off62_blk L T0) _ 1024 1936 inb_S2048_S1024_1024 inb_S2048_S16_1936 _ (by decide) (by decide) _ _ x) ?_
        refine View.forall_pieces_cons (fun x => step_tcol (F := F) L fl _ 3 (by decide) (off62_blk L T0) _ 1024 1920 inb_S2048_S1024_1024 inb_S2048_S16_1920 _ (by decide) (by decide) _ _ x) ?_
        refine View.forall_pieces_cons (fun x => step_tcol (F := F) L fl _ 3 (by decide) (off62_blk L T0) _ 1024 1904 inb_S2048_S1024_1024 inb_S2048_S16_1904 _ (by decide) (by decide) _ _ x) ?_
        refine View.forall_pieces_cons (fun x => step_tcol (F := F) L fl _ 3 (by decide) (off62_blk L T0) _ 1024 1888 inb_S2048_S1024_1024 inb_S2048_S16_1888 _ (by decide) (by decide) _ _ x) ?_
        refine View.forall_pieces_cons (fun x => step_tcol (F := F) L fl _ 3 (by decide) (off62_blk L T0) _ 1024 1872 inb_S2048_S1024_1024 inb_S2048_S16_1872 _ (by decide) (by decide) _ _ x) ?_
        refine View.forall_pieces_cons (fun x => step_tcol (F := F) L fl _ 3 (by decide) (off62_blk L T0) _ 1024 1856 inb_S2048_S1024_1024 inb_S2048_S16_1856 _ (by decide) (by decide) _ _ x) ?_
        refine View.forall_pieces_cons (fun x => step_tcol (F := F) L fl _ 3 (by decide) (off62_blk L T0) _ 1024 1840 inb_S2048_S1024_1024 inb_S2048_S16_1840 _ (by decide) (by decide) _ _ x) ?_
        refine View.forall_pieces_cons (fun x => step_tcol (F := F) L fl _ 3 (by decide) (off62_blk L T0) _ 1024 1824 inb_S2048_S1024_1024 inb_S2048_S16_1824 _ (by decide) (by decide) _ _ x) ?_
        refine View.forall_pieces_cons (fun x => step_tcol (F := F) L fl _ 3 (by decide) (off62_blk L T0) _ 1024 1808 inb_S2048_S1024_1024 inb_S2048_S16_1808 _ (by decide) (by decide) _ _ x) ?_
        refine View.forall_pieces_cons (fun x => step_tcol (F := F) L fl _ 3 (by decide) (off62_blk L T0) _ 1024 1792 inb_S2048_S1024_1024 inb_S2048_S16_1792 _ (by decide) (by decide) _ _ x) ?_
        refine View.forall_pieces_cons (fun x => step_tcol (F := F) L fl _ 3 (by decide) (off62_blk L T0) _ 1024 1776 inb_S2048_S1024_1024 inb_S2048_S16_1776 _ (by decide) (by decide) _ _ x) ?_
        refine View.forall_pieces_cons (fun x => step_tcol (F := F) L fl _ 3 (by decide) (off62_blk L T0) _ 1024 1760 inb_S2048_S1024_1024 inb_S2048_S16_1760 _ (by decide) (by decide) _ _ x) ?_
        refine View.forall_pieces_cons (fun x => step_tcol (F := F) L fl _ 3 (by decide) (off62_blk L T0) _ 1024 1744 inb_S2048_S1024_1024 inb_S2048_S16_1744 _ (by decide) (by decide) _ _ x) ?_
        refine View.forall_pieces_cons (fun x => step_tcol (F := F) L fl _ 3 (by decide) (off62_blk L T0) _ 1024 1728 inb_S2048_S1024_1024 inb_S2048_S16_1728 _ (by decide) (by decide) _ _ x) ?_
        refine View.forall_pieces_cons (fun x => step_tcol (F := F) L fl _ 3 (by decide) (off62_blk L T0) _ 1024 1712 inb_S2048_S1024_1024 inb_S2048_S16_1712 _ (by decide) (by decide) _ _ x) ?_
        refine View.forall_pieces_cons (fun x => step_tcol (F := F) L fl _ 3 (by decide) (off62_blk L T0) _ 1024 1696 inb_S2048_S1024_1024 inb_S2048_S16_1696 _ (by decide) (by decide) _ _ x) ?_
        refine View.forall_pieces_cons (fun x => step_tcol (F := F) L fl _ 3 (by decide) (off62_blk L T0) _ 1024 1680 inb_S2048_S1024_1024 inb_S2048_S16_1680 _ (by decide) (by decide) _ _ x) ?_
        refine View.forall_pieces_cons (fun x => step_tcol (F := F) L fl _ 3 (by decide) (off62_blk L T0) _ 1024 1664 inb_S2048_S1024_1024 inb_S2048_S16_1664 _ (by decide) (by decide) _ _ x) ?_
        refine View.forall_pieces_cons (fun x => step_tcol (F := F) L fl _ 3 (by decide) (off62_blk L T0) _ 1024 1648 inb_S2048_S1024_1024 inb_S2048_S16_1648 _ (by decide) (by decide) _ _ x) ?_
        refine View.forall_pieces_cons (fun x => step_tcol (F := F) L fl _ 3 (by decide) (off62_blk L T0) _ 1024 1632 inb_S2048_S1024_1024 inb_S2048_S16_1632 _ (by decide) (by decide) _ _ x) ?_
        refine View.forall_pieces_cons (fun x => step_tcol (F := F) L fl _ 3 (by decide) (off62_blk L T0) _ 1024 1616 inb_S2048_S1024_1024 inb_S2048_S16_1616 _ (by decide) (by decide) _ _ x) ?_
        refine View.forall_pieces_cons (fun x => step_tcol (F := F) L fl _ 3 (by decide) (off62_blk L T0) _ 1024 1600 inb_S2048_S1024_1024 inb_S2048_S16_1600 _ (by decide) (by decide) _ _ x) ?_
        refine View.forall_pieces_cons (fun x => step_tcol (F := F) L fl _ 3 (by decide) (off62_blk L T0) _ 1024 1584 inb_S2048_S1024_1024 inb_S2048_S16_1584 _ (by decide) (by decide) _ _ x) ?_
        refine View.forall_pieces_cons (fun x => step_tcol (F := F) L fl _ 3 (by decide) (off62_blk L T0) _ 1024 1568 inb_S2048_S1024_1024 inb_S2048_S16_1568 _ (by decide) (by decide) _ _ x) ?_
        refine View.forall_pieces_cons (fun x => step_tcol (F := F) L fl _ 3 (by decide) (off62_blk L T0) _ 1024 1552 inb_S2048_S1024_1024 inb_S2048_S16_1552 _ (by decide) (by decide) _ _ x) ?_
        refine View.forall_pieces_cons (fun x => step_tcol (F := F) L fl _ 3 (by decide) (off62_blk L T0) _ 1024 1536 inb_S2048_S1024_1024 inb_S2048_S16_1536 _ (by decide) (by decide) _ _ x) ?_
        refine View.forall_pieces_cons (fun x => step_tcol (F := F) L fl _ 3 (by decide) (off62_blk L T0) _ 1024 1520 inb_S2048_S1024_1024 inb_S2048_S16_1520 _ (by decide) (by decide) _ _ x) ?_
        refine View.forall_pieces_cons (fun x => step_tcol (F := F) L fl _ 3 (by decide) (off62_blk L T0) _ 1024 1504 inb_S2048_S1024_1024 inb_S2048_S16_1504 _ (by decide) (by decide) _ _ x) ?_
        refine View.forall_pieces_cons (fun x => step_tcol (F := F) L fl _ 3 (by decide) (off62_blk L T0) _ 1024 1488 inb_S2048_S1024_1024 inb_S2048_S16_1488 _ (by decide) (by decide) _ _ x) ?_
        refine View.forall_pieces_cons (fun x => step_tcol (F := F) L fl _ 3 (by decide) (off62_blk L T0) _ 1024 1472 inb_S2048_S1024_1024 inb_S2048_S16_1472 _ (by decide) (by decide) _ _ x) ?_
        refine View.forall_pieces_cons (fun x => step_tcol (F := F) L fl _ 3 (by decide) (off62_blk L T0) _ 1024 1456 inb_S2048_S1024_1024 inb_S2048_S16_1456 _ (by decide) (by decide) _ _ x) ?_
        refine View.forall_pieces_cons (fun x => step_tcol (F := F) L fl _ 3 (by decide) (off62_blk L T0) _ 1024 1440 inb_S2048_S1024_1024 inb_S2048_S16_1440 _ (by decide) (by decide) _ _ x) ?_
        refine View.forall_pieces_cons (fun x => step_tcol (F := F) L fl _ 3 (by decide) (off62_blk L T0) _ 1024 1424 inb_S2048_S1024_1024 inb_S2048_S16_1424 _ (by decide) (by decide) _ _ x) ?_
        refine View.forall_pieces_cons (fun x => step_tcol (F := F) L fl _ 3 (by decide) (off62_blk L T0) _ 1024 1408 inb_S2048_S1024_1024 inb_S2048_S16_1408 _ (by decide) (by decide) _ _ x) ?_
        refine View.forall_pieces_cons (fun x => step_tcol (F := F) L fl _ 3 (by decide) (off62_blk L T0) _ 1024 1392 inb_S2048_S1024_1024 inb_S2048_S16_1392 _ (by decide) (by decide) _ _ x) ?_
        refine View.forall_pieces_cons (fun x => step_tcol (F := F) L fl _ 3 (by decide) (off62_blk L T0) _ 1024 1376 inb_S2048_S1024_1024 inb_S2048_S16_1376 _ (by decide) (by decide) _ _ x) ?_
        refine View.forall_pieces_cons (fun x => step_tcol (F := F) L fl _ 3 (by decide) (off62_blk L T0) _ 1024 1360 inb_S2048_S1024_1024 inb_S2048_S16_1360 _ (by decide) (by decide) _ _ x) ?_
        refine View.forall_pieces_cons (fun x => step_tcol (F := F) L fl _ 3 (by decide) (off62_blk L T0) _ 1024 1344 inb_S2048_S1024_1024 inb_S2048_S16_1344 _ (by decide) (by decide) _ _ x) ?_
        refine View.forall_pieces_cons (fun x => step_tcol (F := F) L fl _ 3 (by decide) (off62_blk L T0) _ 1024 1328 inb_S2048_S1024_1024 inb_S2048_S16_1328 _ (by decide) (by decide) _ _ x) ?_
        refine View.forall_pieces_cons (fun x => step_tcol (F := F) L fl _ 3 (by decide) (off62_blk L T0) _ 1024 1312 inb_S2048_S1024_1024 inb_S2048_S16_1312 _ (by decide) (by decide) _ _ x) ?_
        refine View.forall_pieces_cons (fun x => step_tcol (F := F) L fl _ 3 (by decide) (off62_blk L T0) _ 1024 1296 inb_S2048_S1024_1024 inb_S2048_S16_1296 _ (by decide) (by decide) _ _ x) ?_
        refine View.forall_pieces_cons (fun x => step_tcol (F := F) L fl _ 3 (by decide) (off62_blk L T0) _ 1024 1280 inb_S2048_S1024_1024 inb_S2048_S16_1280 _ (by decide) (by decide) _ _ x) ?_
        refine View.forall_pieces_cons (fun x => step_tcol (F := F) L fl _ 3 (by decide) (off62_blk L T0) _ 1024 1264 inb_S2048_S1024_1024 inb_S2048_S16_1264 _ (by decide) (by decide) _ _ x) ?_
        refine View.forall_pieces_cons (fun x => step_tcol (F := F) L fl _ 3 (by decide) (off62_blk L T0) _ 1024 1248 inb_S2048_S1024_1024 inb_S2048_S16_1248 _ (by decide) (by decide) _ _ x) ?_
        refine View.forall_pieces_cons (fun x => step_tcol (F := F) L fl _ 3 (by decide) (off62_blk L T0) _ 1024 1232 inb_S2048_S1024_1024 inb_S2048_S16_1232 _ (by decide) (by decide) _ _ x) ?_
        refine View.forall_pieces_cons (fun x => step_tcol (F := F) L fl _ 3 (by decide) (off62_blk L T0) _ 1024 1216 inb_S2048_S1024_1024 inb_S2048_S16_1216 _ (by decide) (by decide) _ _ x) ?_
        refine View.forall_pieces_cons (fun x => step_tcol (F := F) L fl _ 3 (by decide) (off62_blk L T0) _ 1024 1200 inb_S2048_S1024_1024 inb_S2048_S16_1200 _ (by decide) (by decide) _ _ x) ?_
        refine View.forall_pieces_cons (fun x => step_tcol (F := F) L fl _ 3 (by decide) (off62_blk L T0) _ 1024 1184 inb_S2048_S1024_1024 inb_S2048_S16_1184 _ (by decide) (by decide) _ _ x) ?_
        refine View.forall_pieces_cons (fun x => step_tcol (F := F) L fl _ 3 (by decide) (off62_blk L T0) _ 1024 1168 inb_S2048_S1024_1024 inb_S2048_S16_1168 _ (by decide) (by decide) _ _ x) ?_
        refine View.forall_pieces_cons (fun x => step_tcol (F := F) L fl _ 3 (by decide) (off62_blk L T0) _ 1024 1152 inb_S2048_S1024_1024 inb_S2048_S16_1152 _ (by decide) (by decide) _ _ x) ?_
        refine View.forall_pieces_cons (fun x => step_tcol (F := F) L fl _ 3 (by decide) (off62_blk L T0) _ 1024 1136 inb_S2048_S1024_1024 inb_S2048_S16_1136 _ (by decide) (by decide) _ _ x) ?_
        refine View.forall_pieces_cons (fun x => step_tcol (F := F) L fl _ 3 (by decide) (off62_blk L T0) _ 1024 1120 inb_S2048_S1024_1024 inb_S2048_S16_1120 _ (by decide) (by decide) _ _ x) ?_
        refine View.forall_pieces_cons (fun x => step_tcol (F := F) L fl _ 3 (by decide) (off62_blk L T0) _ 1024 1104 inb_S2048_S1024_1024 inb_S2048_S16_1104 _ (by decide) (by decide) _ _ x) ?_
        refine View.forall_pieces_cons (fun x => step_tcol (F := F) L fl _ 3 (by decide) (off62_blk L T0) _ 1024 1088 inb_S2048_S1024_1024 inb_S2048_S16_1088 _ (by decide) (by decide) _ _ x) ?_
        refine View.forall_pieces_cons (fun x => step_tcol (F := F) L fl _ 3 (by decide) (off62_blk L T0) _ 1024 1072 inb_S2048_S1024_1024 inb_S2048_S16_1072 _ (by decide) (by decide) _ _ x) ?_
        refine View.forall_pieces_cons (fun x => step_tcol (F := F) L fl _ 3 (by decide) (off62_blk L T0) _ 1024 1056 inb_S2048_S1024_1024 inb_S2048_S16_1056 _ (by decide) (by decide) _ _ x) ?_
        refine View.forall_pieces_cons (fun x => step_tcol (F := F) L fl _ 3 (by decide) (off62_blk L T0) _ 1024 1040 inb_S2048_S1024_1024 inb_S2048_S16_1040 _ (by decide) (by decide) _ _ x) ?_
        refine View.forall_pieces_cons (fun x => step_tcol (F := F) L fl _ 3 (by decide) (off62_blk L T0) _ 1024 1024 inb_S2048_S1024_1024 inb_S2048_S16_1024 _ (by decide) (by decide) _ _ x) ?_
        exact View.forall_pieces_nil
  iintro %_ HI
  unfold inv0
  icases HI with ⟨-, %r2, %g12, %g22, %wb2, %o2, %ho2, ⟨%hT2, %hR2, %ho2_eq, %hV2⟩, Hg0, H1, Ht, H3, H2, H4r, Hg1, %W2, %hW2, HO⟩
  obtain rfl : o2 = ![1024] := ho2_eq.trans e8
  have hin2 := hin_of d L g12 hT2
  sl_exec_parts (disch := decide)
  -- odd block 3
  ihave H4j := (wb_join_b (F := F) d L _ _) $$ [H4r_2 H4r]
  · isplitl [H4r_2] <;> iassumption
  sl_for (inv1 d L fl qt tab O (insert (SemLoc.dma cc1_scratch7.sem, (default : HIx 1)) (insert (SemLoc.dma cc1_scratch10.sem, (default : HIx 1)) W2)) 3) $$ [Hmw Hg0 Ht H3 H1 H2 H4j Hg1 HO]
  case region => intro k _; exact pair1_region d L fl qt tab O _ T1 _ k
  · rw [inv1_flight (F := F) d L fl qt tab O _ 3 _ (Or.inl (by decide))]
    unfold invF
    isplitl [Hmw]; · iexact Hmw
    iexists _; iexists _; iexists _; iexists _; iexists ![1024]; iexists ho2
    isplitr; rotate_left
    · isplitl [Hg0]; rotate_left
      · isplitl [H1]; · iexact H1
        isplitl [Ht]; · iexact Ht
        isplitl [H3]; · iexact H3
        isplitl [H2]; · iexact H2
        isplitl [H4j]; · iexact H4j
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A3: the list's fifty words are not touched by the later stores
          intro i hi
          have hi0 := (mem_listM _ _ i).mp hi
          simp only [Matrix.cons_val_zero] at hi0
          exact (keep_word d L _ _ 0 (by rfl) i (by omega)).symm
    · ipureintro
      -- HOLE B3: the values at the loop's entry
      obtain ⟨hTh, hRh, hRowsh⟩ := even_to_odd d L fl tab 2 _ _ _ _ hV2
      have_entry odd_entry
      refine key hfl hTh hRh hRowsh ?_ (by rfl) ?_ (by rfl) (by unfold lo1; rfl)
      ·
        refine View.forall_pieces_cons (fun x => step_trow (F := F) L fl _ 4 (by decide) (off5_blk L T1) _ 0 1008 inb_S2048_S1024_0 inb_S2048_S16_1008 _ (by decide) (by decide) _ _ x) ?_
        refine View.forall_pieces_cons (fun x => step_trow (F := F) L fl _ 4 (by decide) (off5_blk L T1) _ 0 992 inb_S2048_S1024_0 inb_S2048_S16_992 _ (by decide) (by decide) _ _ x) ?_
        refine View.forall_pieces_cons (fun x => step_trow (F := F) L fl _ 4 (by decide) (off5_blk L T1) _ 0 976 inb_S2048_S1024_0 inb_S2048_S16_976 _ (by decide) (by decide) _ _ x) ?_
        refine View.forall_pieces_cons (fun x => step_trow (F := F) L fl _ 4 (by decide) (off5_blk L T1) _ 0 960 inb_S2048_S1024_0 inb_S2048_S16_960 _ (by decide) (by decide) _ _ x) ?_
        refine View.forall_pieces_cons (fun x => step_trow (F := F) L fl _ 4 (by decide) (off5_blk L T1) _ 0 944 inb_S2048_S1024_0 inb_S2048_S16_944 _ (by decide) (by decide) _ _ x) ?_
        refine View.forall_pieces_cons (fun x => step_trow (F := F) L fl _ 4 (by decide) (off5_blk L T1) _ 0 928 inb_S2048_S1024_0 inb_S2048_S16_928 _ (by decide) (by decide) _ _ x) ?_
        refine View.forall_pieces_cons (fun x => step_trow (F := F) L fl _ 4 (by decide) (off5_blk L T1) _ 0 912 inb_S2048_S1024_0 inb_S2048_S16_912 _ (by decide) (by decide) _ _ x) ?_
        refine View.forall_pieces_cons (fun x => step_trow (F := F) L fl _ 4 (by decide) (off5_blk L T1) _ 0 896 inb_S2048_S1024_0 inb_S2048_S16_896 _ (by decide) (by decide) _ _ x) ?_
        refine View.forall_pieces_cons (fun x => step_trow (F := F) L fl _ 4 (by decide) (off5_blk L T1) _ 0 880 inb_S2048_S1024_0 inb_S2048_S16_880 _ (by decide) (by decide) _ _ x) ?_
        refine View.forall_pieces_cons (fun x => step_trow (F := F) L fl _ 4 (by decide) (off5_blk L T1) _ 0 864 inb_S2048_S1024_0 inb_S2048_S16_864 _ (by decide) (by decide) _ _ x) ?_
        refine View.forall_pieces_cons (fun x => step_trow (F := F) L fl _ 4 (by decide) (off5_blk L T1) _ 0 848 inb_S2048_S1024_0 inb_S2048_S16_848 _ (by decide) (by decide) _ _ x) ?_
        refine View.forall_pieces_cons (fun x => step_trow (F := F) L fl _ 4 (by decide) (off5_blk L T1) _ 0 832 inb_S2048_S1024_0 inb_S2048_S16_832 _ (by decide) (by decide) _ _ x) ?_
        refine View.forall_pieces_cons (fun x => step_trow (F := F) L fl _ 4 (by decide) (off5_blk L T1) _ 0 816 inb_S2048_S1024_0 inb_S2048_S16_816 _ (by decide) (by decide) _ _ x) ?_
        refine View.forall_pieces_cons (fun x => step_trow (F := F) L fl _ 4 (by decide) (off5_blk L T1) _ 0 800 inb_S2048_S1024_0 inb_S2048_S16_800 _ (by decide) (by decide) _ _ x) ?_
        refine View.forall_pieces_cons (fun x => step_trow (F := F) L fl _ 4 (by decide) (off5_blk L T1) _ 0 784 inb_S2048_S1024_0 inb_S2048_S16_784 _ (by decide) (by decide) _ _ x) ?_
        refine View.forall_pieces_cons (fun x => step_trow (F := F) L fl _ 4 (by decide) (off5_blk L T1) _ 0 768 inb_S2048_S1024_0 inb_S2048_S16_768 _ (by decide) (by decide) _ _ x) ?_
        refine View.forall_pieces_cons (fun x => step_trow (F := F) L fl _ 4 (by decide) (off5_blk L T1) _ 0 752 inb_S2048_S1024_0 inb_S2048_S16_752 _ (by decide) (by decide) _ _ x) ?_
        refine View.forall_pieces_cons (fun x => step_trow (F := F) L fl _ 4 (by decide) (off5_blk L T1) _ 0 736 inb_S2048_S1024_0 inb_S2048_S16_736 _ (by decide) (by decide) _ _ x) ?_
        refine View.forall_pieces_cons (fun x => step_trow (F := F) L fl _ 4 (by decide) (off5_blk L T1) _ 0 720 inb_S2048_S1024_0 inb_S2048_S16_720 _ (by decide) (by decide) _ _ x) ?_
        refine View.forall_pieces_cons (fun x => step_trow (F := F) L fl _ 4 (by decide) (off5_blk L T1) _ 0 704 inb_S2048_S1024_0 inb_S2048_S16_704 _ (by decide) (by decide) _ _ x) ?_
        refine View.forall_pieces_cons (fun x => step_trow (F := F) L fl _ 4 (by decide) (off5_blk L T1) _ 0 688 inb_S2048_S1024_0 inb_S2048_S16_688 _ (by decide) (by decide) _ _ x) ?_
        refine View.forall_pieces_cons (fun x => step_trow (F := F) L fl _ 4 (by decide) (off5_blk L T1) _ 0 672 inb_S2048_S1024_0 inb_S2048_S16_672 _ (by decide) (by decide) _ _ x) ?_
        refine View.forall_pieces_cons (fun x => step_trow (F := F) L fl _ 4 (by decide) (off5_blk L T1) _ 0 656 inb_S2048_S1024_0 inb_S2048_S16_656 _ (by decide) (by decide) _ _ x) ?_
        refine View.forall_pieces_cons (fun x => step_trow (F := F) L fl _ 4 (by decide) (off5_blk L T1) _ 0 640 inb_S2048_S1024_0 inb_S2048_S16_640 _ (by decide) (by decide) _ _ x) ?_
        refine View.forall_pieces_cons (fun x => step_trow (F := F) L fl _ 4 (by decide) (off5_blk L T1) _ 0 624 inb_S2048_S1024_0 inb_S2048_S16_624 _ (by decide) (by decide) _ _ x) ?_
        refine View.forall_pieces_cons (fun x => step_trow (F := F) L fl _ 4 (by decide) (off5_blk L T1) _ 0 608 inb_S2048_S1024_0 inb_S2048_S16_608 _ (by decide) (by decide) _ _ x) ?_
        refine View.forall_pieces_cons (fun x => step_trow (F := F) L fl _ 4 (by decide) (off5_blk L T1) _ 0 592 inb_S2048_S1024_0 inb_S2048_S16_592 _ (by decide) (by decide) _ _ x) ?_
        refine View.forall_pieces_cons (fun x => step_trow (F := F) L fl _ 4 (by decide) (off5_blk L T1) _ 0 576 inb_S2048_S1024_0 inb_S2048_S16_576 _ (by decide) (by decide) _ _ x) ?_
        refine View.forall_pieces_cons (fun x => step_trow (F := F) L fl _ 4 (by decide) (off5_blk L T1) _ 0 560 inb_S2048_S1024_0 inb_S2048_S16_560 _ (by decide) (by decide) _ _ x) ?_
        refine View.forall_pieces_cons (fun x => step_trow (F := F) L fl _ 4 (by decide) (off5_blk L T1) _ 0 544 inb_S2048_S1024_0 inb_S2048_S16_544 _ (by decide) (by decide) _ _ x) ?_
        refine View.forall_pieces_cons (fun x => step_trow (F := F) L fl _ 4 (by decide) (off5_blk L T1) _ 0 528 inb_S2048_S1024_0 inb_S2048_S16_528 _ (by decide) (by decide) _ _ x) ?_
        refine View.forall_pieces_cons (fun x => step_trow (F := F) L fl _ 4 (by decide) (off5_blk L T1) _ 0 512 inb_S2048_S1024_0 inb_S2048_S16_512 _ (by decide) (by decide) _ _ x) ?_
        refine View.forall_pieces_cons (fun x => step_trow (F := F) L fl _ 4 (by decide) (off5_blk L T1) _ 0 496 inb_S2048_S1024_0 inb_S2048_S16_496 _ (by decide) (by decide) _ _ x) ?_
        refine View.forall_pieces_cons (fun x => step_trow (F := F) L fl _ 4 (by decide) (off5_blk L T1) _ 0 480 inb_S2048_S1024_0 inb_S2048_S16_480 _ (by decide) (by decide) _ _ x) ?_
        refine View.forall_pieces_cons (fun x => step_trow (F := F) L fl _ 4 (by decide) (off5_blk L T1) _ 0 464 inb_S2048_S1024_0 inb_S2048_S16_464 _ (by decide) (by decide) _ _ x) ?_
        refine View.forall_pieces_cons (fun x => step_trow (F := F) L fl _ 4 (by decide) (off5_blk L T1) _ 0 448 inb_S2048_S1024_0 inb_S2048_S16_448 _ (by decide) (by decide) _ _ x) ?_
        refine View.forall_pieces_cons (fun x => step_trow (F := F) L fl _ 4 (by decide) (off5_blk L T1) _ 0 432 inb_S2048_S1024_0 inb_S2048_S16_432 _ (by decide) (by decide) _ _ x) ?_
        refine View.forall_pieces_cons (fun x => step_trow (F := F) L fl _ 4 (by decide) (off5_blk L T1) _ 0 416 inb_S2048_S1024_0 inb_S2048_S16_416 _ (by decide) (by decide) _ _ x) ?_
        refine View.forall_pieces_cons (fun x => step_trow (F := F) L fl _ 4 (by decide) (off5_blk L T1) _ 0 400 inb_S2048_S1024_0 inb_S2048_S16_400 _ (by decide) (by decide) _ _ x) ?_
        refine View.forall_pieces_cons (fun x => step_trow (F := F) L fl _ 4 (by decide) (off5_blk L T1) _ 0 384 inb_S2048_S1024_0 inb_S2048_S16_384 _ (by decide) (by decide) _ _ x) ?_
        refine View.forall_pieces_cons (fun x => step_trow (F := F) L fl _ 4 (by decide) (off5_blk L T1) _ 0 368 inb_S2048_S1024_0 inb_S2048_S16_368 _ (by decide) (by decide) _ _ x) ?_
        refine View.forall_pieces_cons (fun x => step_trow (F := F) L fl _ 4 (by decide) (off5_blk L T1) _ 0 352 inb_S2048_S1024_0 inb_S2048_S16_352 _ (by decide) (by decide) _ _ x) ?_
        refine View.forall_pieces_cons (fun x => step_trow (F := F) L fl _ 4 (by decide) (off5_blk L T1) _ 0 336 inb_S2048_S1024_0 inb_S2048_S16_336 _ (by decide) (by decide) _ _ x) ?_
        refine View.forall_pieces_cons (fun x => step_trow (F := F) L fl _ 4 (by decide) (off5_blk L T1) _ 0 320 inb_S2048_S1024_0 inb_S2048_S16_320 _ (by decide) (by decide) _ _ x) ?_
        refine View.forall_pieces_cons (fun x => step_trow (F := F) L fl _ 4 (by decide) (off5_blk L T1) _ 0 304 inb_S2048_S1024_0 inb_S2048_S16_304 _ (by decide) (by decide) _ _ x) ?_
        refine View.forall_pieces_cons (fun x => step_trow (F := F) L fl _ 4 (by decide) (off5_blk L T1) _ 0 288 inb_S2048_S1024_0 inb_S2048_S16_288 _ (by decide) (by decide) _ _ x) ?_
        refine View.forall_pieces_cons (fun x => step_trow (F := F) L fl _ 4 (by decide) (off5_blk L T1) _ 0 272 inb_S2048_S1024_0 inb_S2048_S16_272 _ (by decide) (by decide) _ _ x) ?_
        refine View.forall_pieces_cons (fun x => step_trow (F := F) L fl _ 4 (by decide) (off5_blk L T1) _ 0 256 inb_S2048_S1024_0 inb_S2048_S16_256 _ (by decide) (by decide) _ _ x) ?_
        refine View.forall_pieces_cons (fun x => step_trow (F := F) L fl _ 4 (by decide) (off5_blk L T1) _ 0 240 inb_S2048_S1024_0 inb_S2048_S16_240 _ (by decide) (by decide) _ _ x) ?_
        refine View.forall_pieces_cons (fun x => step_trow (F := F) L fl _ 4 (by decide) (off5_blk L T1) _ 0 224 inb_S2048_S1024_0 inb_S2048_S16_224 _ (by decide) (by decide) _ _ x) ?_
        refine View.forall_pieces_cons (fun x => step_trow (F := F) L fl _ 4 (by decide) (off5_blk L T1) _ 0 208 inb_S2048_S1024_0 inb_S2048_S16_208 _ (by decide) (by decide) _ _ x) ?_
        refine View.forall_pieces_cons (fun x => step_trow (F := F) L fl _ 4 (by decide) (off5_blk L T1) _ 0 192 inb_S2048_S1024_0 inb_S2048_S16_192 _ (by decide) (by decide) _ _ x) ?_
        refine View.forall_pieces_cons (fun x => step_trow (F := F) L fl _ 4 (by decide) (off5_blk L T1) _ 0 176 inb_S2048_S1024_0 inb_S2048_S16_176 _ (by decide) (by decide) _ _ x) ?_
        refine View.forall_pieces_cons (fun x => step_trow (F := F) L fl _ 4 (by decide) (off5_blk L T1) _ 0 160 inb_S2048_S1024_0 inb_S2048_S16_160 _ (by decide) (by decide) _ _ x) ?_
        refine View.forall_pieces_cons (fun x => step_trow (F := F) L fl _ 4 (by decide) (off5_blk L T1) _ 0 144 inb_S2048_S1024_0 inb_S2048_S16_144 _ (by decide) (by decide) _ _ x) ?_
        refine View.forall_pieces_cons (fun x => step_trow (F := F) L fl _ 4 (by decide) (off5_blk L T1) _ 0 128 inb_S2048_S1024_0 inb_S2048_S16_128 _ (by decide) (by decide) _ _ x) ?_
        refine View.forall_pieces_cons (fun x => step_trow (F := F) L fl _ 4 (by decide) (off5_blk L T1) _ 0 112 inb_S2048_S1024_0 inb_S2048_S16_112 _ (by decide) (by decide) _ _ x) ?_
        refine View.forall_pieces_cons (fun x => step_trow (F := F) L fl _ 4 (by decide) (off5_blk L T1) _ 0 96 inb_S2048_S1024_0 inb_S2048_S16_96 _ (by decide) (by decide) _ _ x) ?_
        refine View.forall_pieces_cons (fun x => step_trow (F := F) L fl _ 4 (by decide) (off5_blk L T1) _ 0 80 inb_S2048_S1024_0 inb_S2048_S16_80 _ (by decide) (by decide) _ _ x) ?_
        refine View.forall_pieces_cons (fun x => step_trow (F := F) L fl _ 4 (by decide) (off5_blk L T1) _ 0 64 inb_S2048_S1024_0 inb_S2048_S16_64 _ (by decide) (by decide) _ _ x) ?_
        refine View.forall_pieces_cons (fun x => step_trow (F := F) L fl _ 4 (by decide) (off5_blk L T1) _ 0 48 inb_S2048_S1024_0 inb_S2048_S16_48 _ (by decide) (by decide) _ _ x) ?_
        refine View.forall_pieces_cons (fun x => step_trow (F := F) L fl _ 4 (by decide) (off5_blk L T1) _ 0 32 inb_S2048_S1024_0 inb_S2048_S16_32 _ (by decide) (by decide) _ _ x) ?_
        refine View.forall_pieces_cons (fun x => step_trow (F := F) L fl _ 4 (by decide) (off5_blk L T1) _ 0 16 inb_S2048_S1024_0 inb_S2048_S16_16 _ (by decide) (by decide) _ _ x) ?_
        refine View.forall_pieces_cons (fun x => step_trow (F := F) L fl _ 4 (by decide) (off5_blk L T1) _ 0 0 inb_S2048_S1024_0 inb_S2048_S16_0 _ (by decide) (by decide) _ _ x) ?_
        exact View.forall_pieces_nil
      ·
        refine View.forall_pieces_cons (fun x => step_tcol (F := F) L fl _ 4 (by decide) (off5_blk L T1) _ 0 1008 inb_S2048_S1024_0 inb_S2048_S16_1008 _ (by decide) (by decide) _ _ x) ?_
        refine View.forall_pieces_cons (fun x => step_tcol (F := F) L fl _ 4 (by decide) (off5_blk L T1) _ 0 992 inb_S2048_S1024_0 inb_S2048_S16_992 _ (by decide) (by decide) _ _ x) ?_
        refine View.forall_pieces_cons (fun x => step_tcol (F := F) L fl _ 4 (by decide) (off5_blk L T1) _ 0 976 inb_S2048_S1024_0 inb_S2048_S16_976 _ (by decide) (by decide) _ _ x) ?_
        refine View.forall_pieces_cons (fun x => step_tcol (F := F) L fl _ 4 (by decide) (off5_blk L T1) _ 0 960 inb_S2048_S1024_0 inb_S2048_S16_960 _ (by decide) (by decide) _ _ x) ?_
        refine View.forall_pieces_cons (fun x => step_tcol (F := F) L fl _ 4 (by decide) (off5_blk L T1) _ 0 944 inb_S2048_S1024_0 inb_S2048_S16_944 _ (by decide) (by decide) _ _ x) ?_
        refine View.forall_pieces_cons (fun x => step_tcol (F := F) L fl _ 4 (by decide) (off5_blk L T1) _ 0 928 inb_S2048_S1024_0 inb_S2048_S16_928 _ (by decide) (by decide) _ _ x) ?_
        refine View.forall_pieces_cons (fun x => step_tcol (F := F) L fl _ 4 (by decide) (off5_blk L T1) _ 0 912 inb_S2048_S1024_0 inb_S2048_S16_912 _ (by decide) (by decide) _ _ x) ?_
        refine View.forall_pieces_cons (fun x => step_tcol (F := F) L fl _ 4 (by decide) (off5_blk L T1) _ 0 896 inb_S2048_S1024_0 inb_S2048_S16_896 _ (by decide) (by decide) _ _ x) ?_
        refine View.forall_pieces_cons (fun x => step_tcol (F := F) L fl _ 4 (by decide) (off5_blk L T1) _ 0 880 inb_S2048_S1024_0 inb_S2048_S16_880 _ (by decide) (by decide) _ _ x) ?_
        refine View.forall_pieces_cons (fun x => step_tcol (F := F) L fl _ 4 (by decide) (off5_blk L T1) _ 0 864 inb_S2048_S1024_0 inb_S2048_S16_864 _ (by decide) (by decide) _ _ x) ?_
        refine View.forall_pieces_cons (fun x => step_tcol (F := F) L fl _ 4 (by decide) (off5_blk L T1) _ 0 848 inb_S2048_S1024_0 inb_S2048_S16_848 _ (by decide) (by decide) _ _ x) ?_
        refine View.forall_pieces_cons (fun x => step_tcol (F := F) L fl _ 4 (by decide) (off5_blk L T1) _ 0 832 inb_S2048_S1024_0 inb_S2048_S16_832 _ (by decide) (by decide) _ _ x) ?_
        refine View.forall_pieces_cons (fun x => step_tcol (F := F) L fl _ 4 (by decide) (off5_blk L T1) _ 0 816 inb_S2048_S1024_0 inb_S2048_S16_816 _ (by decide) (by decide) _ _ x) ?_
        refine View.forall_pieces_cons (fun x => step_tcol (F := F) L fl _ 4 (by decide) (off5_blk L T1) _ 0 800 inb_S2048_S1024_0 inb_S2048_S16_800 _ (by decide) (by decide) _ _ x) ?_
        refine View.forall_pieces_cons (fun x => step_tcol (F := F) L fl _ 4 (by decide) (off5_blk L T1) _ 0 784 inb_S2048_S1024_0 inb_S2048_S16_784 _ (by decide) (by decide) _ _ x) ?_
        refine View.forall_pieces_cons (fun x => step_tcol (F := F) L fl _ 4 (by decide) (off5_blk L T1) _ 0 768 inb_S2048_S1024_0 inb_S2048_S16_768 _ (by decide) (by decide) _ _ x) ?_
        refine View.forall_pieces_cons (fun x => step_tcol (F := F) L fl _ 4 (by decide) (off5_blk L T1) _ 0 752 inb_S2048_S1024_0 inb_S2048_S16_752 _ (by decide) (by decide) _ _ x) ?_
        refine View.forall_pieces_cons (fun x => step_tcol (F := F) L fl _ 4 (by decide) (off5_blk L T1) _ 0 736 inb_S2048_S1024_0 inb_S2048_S16_736 _ (by decide) (by decide) _ _ x) ?_
        refine View.forall_pieces_cons (fun x => step_tcol (F := F) L fl _ 4 (by decide) (off5_blk L T1) _ 0 720 inb_S2048_S1024_0 inb_S2048_S16_720 _ (by decide) (by decide) _ _ x) ?_
        refine View.forall_pieces_cons (fun x => step_tcol (F := F) L fl _ 4 (by decide) (off5_blk L T1) _ 0 704 inb_S2048_S1024_0 inb_S2048_S16_704 _ (by decide) (by decide) _ _ x) ?_
        refine View.forall_pieces_cons (fun x => step_tcol (F := F) L fl _ 4 (by decide) (off5_blk L T1) _ 0 688 inb_S2048_S1024_0 inb_S2048_S16_688 _ (by decide) (by decide) _ _ x) ?_
        refine View.forall_pieces_cons (fun x => step_tcol (F := F) L fl _ 4 (by decide) (off5_blk L T1) _ 0 672 inb_S2048_S1024_0 inb_S2048_S16_672 _ (by decide) (by decide) _ _ x) ?_
        refine View.forall_pieces_cons (fun x => step_tcol (F := F) L fl _ 4 (by decide) (off5_blk L T1) _ 0 656 inb_S2048_S1024_0 inb_S2048_S16_656 _ (by decide) (by decide) _ _ x) ?_
        refine View.forall_pieces_cons (fun x => step_tcol (F := F) L fl _ 4 (by decide) (off5_blk L T1) _ 0 640 inb_S2048_S1024_0 inb_S2048_S16_640 _ (by decide) (by decide) _ _ x) ?_
        refine View.forall_pieces_cons (fun x => step_tcol (F := F) L fl _ 4 (by decide) (off5_blk L T1) _ 0 624 inb_S2048_S1024_0 inb_S2048_S16_624 _ (by decide) (by decide) _ _ x) ?_
        refine View.forall_pieces_cons (fun x => step_tcol (F := F) L fl _ 4 (by decide) (off5_blk L T1) _ 0 608 inb_S2048_S1024_0 inb_S2048_S16_608 _ (by decide) (by decide) _ _ x) ?_
        refine View.forall_pieces_cons (fun x => step_tcol (F := F) L fl _ 4 (by decide) (off5_blk L T1) _ 0 592 inb_S2048_S1024_0 inb_S2048_S16_592 _ (by decide) (by decide) _ _ x) ?_
        refine View.forall_pieces_cons (fun x => step_tcol (F := F) L fl _ 4 (by decide) (off5_blk L T1) _ 0 576 inb_S2048_S1024_0 inb_S2048_S16_576 _ (by decide) (by decide) _ _ x) ?_
        refine View.forall_pieces_cons (fun x => step_tcol (F := F) L fl _ 4 (by decide) (off5_blk L T1) _ 0 560 inb_S2048_S1024_0 inb_S2048_S16_560 _ (by decide) (by decide) _ _ x) ?_
        refine View.forall_pieces_cons (fun x => step_tcol (F := F) L fl _ 4 (by decide) (off5_blk L T1) _ 0 544 inb_S2048_S1024_0 inb_S2048_S16_544 _ (by decide) (by decide) _ _ x) ?_
        refine View.forall_pieces_cons (fun x => step_tcol (F := F) L fl _ 4 (by decide) (off5_blk L T1) _ 0 528 inb_S2048_S1024_0 inb_S2048_S16_528 _ (by decide) (by decide) _ _ x) ?_
        refine View.forall_pieces_cons (fun x => step_tcol (F := F) L fl _ 4 (by decide) (off5_blk L T1) _ 0 512 inb_S2048_S1024_0 inb_S2048_S16_512 _ (by decide) (by decide) _ _ x) ?_
        refine View.forall_pieces_cons (fun x => step_tcol (F := F) L fl _ 4 (by decide) (off5_blk L T1) _ 0 496 inb_S2048_S1024_0 inb_S2048_S16_496 _ (by decide) (by decide) _ _ x) ?_
        refine View.forall_pieces_cons (fun x => step_tcol (F := F) L fl _ 4 (by decide) (off5_blk L T1) _ 0 480 inb_S2048_S1024_0 inb_S2048_S16_480 _ (by decide) (by decide) _ _ x) ?_
        refine View.forall_pieces_cons (fun x => step_tcol (F := F) L fl _ 4 (by decide) (off5_blk L T1) _ 0 464 inb_S2048_S1024_0 inb_S2048_S16_464 _ (by decide) (by decide) _ _ x) ?_
        refine View.forall_pieces_cons (fun x => step_tcol (F := F) L fl _ 4 (by decide) (off5_blk L T1) _ 0 448 inb_S2048_S1024_0 inb_S2048_S16_448 _ (by decide) (by decide) _ _ x) ?_
        refine View.forall_pieces_cons (fun x => step_tcol (F := F) L fl _ 4 (by decide) (off5_blk L T1) _ 0 432 inb_S2048_S1024_0 inb_S2048_S16_432 _ (by decide) (by decide) _ _ x) ?_
        refine View.forall_pieces_cons (fun x => step_tcol (F := F) L fl _ 4 (by decide) (off5_blk L T1) _ 0 416 inb_S2048_S1024_0 inb_S2048_S16_416 _ (by decide) (by decide) _ _ x) ?_
        refine View.forall_pieces_cons (fun x => step_tcol (F := F) L fl _ 4 (by decide) (off5_blk L T1) _ 0 400 inb_S2048_S1024_0 inb_S2048_S16_400 _ (by decide) (by decide) _ _ x) ?_
        refine View.forall_pieces_cons (fun x => step_tcol (F := F) L fl _ 4 (by decide) (off5_blk L T1) _ 0 384 inb_S2048_S1024_0 inb_S2048_S16_384 _ (by decide) (by decide) _ _ x) ?_
        refine View.forall_pieces_cons (fun x => step_tcol (F := F) L fl _ 4 (by decide) (off5_blk L T1) _ 0 368 inb_S2048_S1024_0 inb_S2048_S16_368 _ (by decide) (by decide) _ _ x) ?_
        refine View.forall_pieces_cons (fun x => step_tcol (F := F) L fl _ 4 (by decide) (off5_blk L T1) _ 0 352 inb_S2048_S1024_0 inb_S2048_S16_352 _ (by decide) (by decide) _ _ x) ?_
        refine View.forall_pieces_cons (fun x => step_tcol (F := F) L fl _ 4 (by decide) (off5_blk L T1) _ 0 336 inb_S2048_S1024_0 inb_S2048_S16_336 _ (by decide) (by decide) _ _ x) ?_
        refine View.forall_pieces_cons (fun x => step_tcol (F := F) L fl _ 4 (by decide) (off5_blk L T1) _ 0 320 inb_S2048_S1024_0 inb_S2048_S16_320 _ (by decide) (by decide) _ _ x) ?_
        refine View.forall_pieces_cons (fun x => step_tcol (F := F) L fl _ 4 (by decide) (off5_blk L T1) _ 0 304 inb_S2048_S1024_0 inb_S2048_S16_304 _ (by decide) (by decide) _ _ x) ?_
        refine View.forall_pieces_cons (fun x => step_tcol (F := F) L fl _ 4 (by decide) (off5_blk L T1) _ 0 288 inb_S2048_S1024_0 inb_S2048_S16_288 _ (by decide) (by decide) _ _ x) ?_
        refine View.forall_pieces_cons (fun x => step_tcol (F := F) L fl _ 4 (by decide) (off5_blk L T1) _ 0 272 inb_S2048_S1024_0 inb_S2048_S16_272 _ (by decide) (by decide) _ _ x) ?_
        refine View.forall_pieces_cons (fun x => step_tcol (F := F) L fl _ 4 (by decide) (off5_blk L T1) _ 0 256 inb_S2048_S1024_0 inb_S2048_S16_256 _ (by decide) (by decide) _ _ x) ?_
        refine View.forall_pieces_cons (fun x => step_tcol (F := F) L fl _ 4 (by decide) (off5_blk L T1) _ 0 240 inb_S2048_S1024_0 inb_S2048_S16_240 _ (by decide) (by decide) _ _ x) ?_
        refine View.forall_pieces_cons (fun x => step_tcol (F := F) L fl _ 4 (by decide) (off5_blk L T1) _ 0 224 inb_S2048_S1024_0 inb_S2048_S16_224 _ (by decide) (by decide) _ _ x) ?_
        refine View.forall_pieces_cons (fun x => step_tcol (F := F) L fl _ 4 (by decide) (off5_blk L T1) _ 0 208 inb_S2048_S1024_0 inb_S2048_S16_208 _ (by decide) (by decide) _ _ x) ?_
        refine View.forall_pieces_cons (fun x => step_tcol (F := F) L fl _ 4 (by decide) (off5_blk L T1) _ 0 192 inb_S2048_S1024_0 inb_S2048_S16_192 _ (by decide) (by decide) _ _ x) ?_
        refine View.forall_pieces_cons (fun x => step_tcol (F := F) L fl _ 4 (by decide) (off5_blk L T1) _ 0 176 inb_S2048_S1024_0 inb_S2048_S16_176 _ (by decide) (by decide) _ _ x) ?_
        refine View.forall_pieces_cons (fun x => step_tcol (F := F) L fl _ 4 (by decide) (off5_blk L T1) _ 0 160 inb_S2048_S1024_0 inb_S2048_S16_160 _ (by decide) (by decide) _ _ x) ?_
        refine View.forall_pieces_cons (fun x => step_tcol (F := F) L fl _ 4 (by decide) (off5_blk L T1) _ 0 144 inb_S2048_S1024_0 inb_S2048_S16_144 _ (by decide) (by decide) _ _ x) ?_
        refine View.forall_pieces_cons (fun x => step_tcol (F := F) L fl _ 4 (by decide) (off5_blk L T1) _ 0 128 inb_S2048_S1024_0 inb_S2048_S16_128 _ (by decide) (by decide) _ _ x) ?_
        refine View.forall_pieces_cons (fun x => step_tcol (F := F) L fl _ 4 (by decide) (off5_blk L T1) _ 0 112 inb_S2048_S1024_0 inb_S2048_S16_112 _ (by decide) (by decide) _ _ x) ?_
        refine View.forall_pieces_cons (fun x => step_tcol (F := F) L fl _ 4 (by decide) (off5_blk L T1) _ 0 96 inb_S2048_S1024_0 inb_S2048_S16_96 _ (by decide) (by decide) _ _ x) ?_
        refine View.forall_pieces_cons (fun x => step_tcol (F := F) L fl _ 4 (by decide) (off5_blk L T1) _ 0 80 inb_S2048_S1024_0 inb_S2048_S16_80 _ (by decide) (by decide) _ _ x) ?_
        refine View.forall_pieces_cons (fun x => step_tcol (F := F) L fl _ 4 (by decide) (off5_blk L T1) _ 0 64 inb_S2048_S1024_0 inb_S2048_S16_64 _ (by decide) (by decide) _ _ x) ?_
        refine View.forall_pieces_cons (fun x => step_tcol (F := F) L fl _ 4 (by decide) (off5_blk L T1) _ 0 48 inb_S2048_S1024_0 inb_S2048_S16_48 _ (by decide) (by decide) _ _ x) ?_
        refine View.forall_pieces_cons (fun x => step_tcol (F := F) L fl _ 4 (by decide) (off5_blk L T1) _ 0 32 inb_S2048_S1024_0 inb_S2048_S16_32 _ (by decide) (by decide) _ _ x) ?_
        refine View.forall_pieces_cons (fun x => step_tcol (F := F) L fl _ 4 (by decide) (off5_blk L T1) _ 0 16 inb_S2048_S1024_0 inb_S2048_S16_16 _ (by decide) (by decide) _ _ x) ?_
        refine View.forall_pieces_cons (fun x => step_tcol (F := F) L fl _ 4 (by decide) (off5_blk L T1) _ 0 0 inb_S2048_S1024_0 inb_S2048_S16_0 _ (by decide) (by decide) _ _ x) ?_
        exact View.forall_pieces_nil
  rw [inv1_flight (F := F) d L fl qt tab O _ 3 _ (Or.inr (by decide))]
  iintro %_ HI
  unfold invF
  icases HI with ⟨-, %r3, %g13, %g23, %wb3, %o3, %ho3, ⟨%hT3, %hR3, %ho3_eq, %hV3⟩, Hg0, H1, Ht, H3, H2, H4r, Hg1, %W3, %hW3, HO⟩
  obtain rfl : o3 = ![0] := ho3_eq.trans e81
  have hin3 := hin_of d L g13 hT3
  sl_exec_parts (disch := decide)
  -- even block 4
  ihave H4j := (wb_join_a (F := F) d L _ _) $$ [H4r_2 H4r]
  · isplitl [H4r_2] <;> iassumption
  sl_for (inv0 d L fl qt tab O (insert (SemLoc.dma cc1_scratch8.sem, (default : HIx 1)) (insert (SemLoc.dma cc1_scratch9.sem, (default : HIx 1)) W3)) 4) $$ [Hmw Hg0 Ht H3 H1 H2 H4j Hg1 HO]
  case region => intro k _; exact pair0_region d L fl qt tab O _ 0#32 0#32 T2 _ k
  ·
    unfold inv0
    isplitl [Hmw]; · iexact Hmw
    iexists _; iexists _; iexists _; iexists _; iexists ![0]; iexists ho3
    isplitr; rotate_left
    · isplitl [Hg0]; rotate_left
      · isplitl [H1]; · iexact H1
        isplitl [Ht]; · iexact Ht
        isplitl [H3]; · iexact H3
        isplitl [H2]; · iexact H2
        isplitl [H4j]; · iexact H4j
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A4: the list's fifty words are not touched by the later stores
          intro i hi
          have hi0 := (mem_listM _ _ i).mp hi
          simp only [Matrix.cons_val_zero] at hi0
          exact (keep_word d L _ _ 1024 (by rfl) i (by omega)).symm
    · ipureintro
      -- HOLE B4: the values at the loop's entry
      obtain ⟨hTh, hRh, hRowsh⟩ := odd_to_even d L fl tab 3 (by decide) _ _ _ _ hV3
      have_entry even_entry
      refine key hfl hTh hRh hRowsh ?_ (by rfl) ?_ (by rfl) (by unfold lo; rfl)
      ·
        refine View.forall_pieces_cons (fun x => step_trow (F := F) L fl _ 5 (by decide) (off62_blk L T1) _ 1024 2032 inb_S2048_S1024_1024 inb_S2048_S16_2032 _ (by decide) (by decide) _ _ x) ?_
        refine View.forall_pieces_cons (fun x => step_trow (F := F) L fl _ 5 (by decide) (off62_blk L T1) _ 1024 2016 inb_S2048_S1024_1024 inb_S2048_S16_2016 _ (by decide) (by decide) _ _ x) ?_
        refine View.forall_pieces_cons (fun x => step_trow (F := F) L fl _ 5 (by decide) (off62_blk L T1) _ 1024 2000 inb_S2048_S1024_1024 inb_S2048_S16_2000 _ (by decide) (by decide) _ _ x) ?_
        refine View.forall_pieces_cons (fun x => step_trow (F := F) L fl _ 5 (by decide) (off62_blk L T1) _ 1024 1984 inb_S2048_S1024_1024 inb_S2048_S16_1984 _ (by decide) (by decide) _ _ x) ?_
        refine View.forall_pieces_cons (fun x => step_trow (F := F) L fl _ 5 (by decide) (off62_blk L T1) _ 1024 1968 inb_S2048_S1024_1024 inb_S2048_S16_1968 _ (by decide) (by decide) _ _ x) ?_
        refine View.forall_pieces_cons (fun x => step_trow (F := F) L fl _ 5 (by decide) (off62_blk L T1) _ 1024 1952 inb_S2048_S1024_1024 inb_S2048_S16_1952 _ (by decide) (by decide) _ _ x) ?_
        refine View.forall_pieces_cons (fun x => step_trow (F := F) L fl _ 5 (by decide) (off62_blk L T1) _ 1024 1936 inb_S2048_S1024_1024 inb_S2048_S16_1936 _ (by decide) (by decide) _ _ x) ?_
        refine View.forall_pieces_cons (fun x => step_trow (F := F) L fl _ 5 (by decide) (off62_blk L T1) _ 1024 1920 inb_S2048_S1024_1024 inb_S2048_S16_1920 _ (by decide) (by decide) _ _ x) ?_
        refine View.forall_pieces_cons (fun x => step_trow (F := F) L fl _ 5 (by decide) (off62_blk L T1) _ 1024 1904 inb_S2048_S1024_1024 inb_S2048_S16_1904 _ (by decide) (by decide) _ _ x) ?_
        refine View.forall_pieces_cons (fun x => step_trow (F := F) L fl _ 5 (by decide) (off62_blk L T1) _ 1024 1888 inb_S2048_S1024_1024 inb_S2048_S16_1888 _ (by decide) (by decide) _ _ x) ?_
        refine View.forall_pieces_cons (fun x => step_trow (F := F) L fl _ 5 (by decide) (off62_blk L T1) _ 1024 1872 inb_S2048_S1024_1024 inb_S2048_S16_1872 _ (by decide) (by decide) _ _ x) ?_
        refine View.forall_pieces_cons (fun x => step_trow (F := F) L fl _ 5 (by decide) (off62_blk L T1) _ 1024 1856 inb_S2048_S1024_1024 inb_S2048_S16_1856 _ (by decide) (by decide) _ _ x) ?_
        refine View.forall_pieces_cons (fun x => step_trow (F := F) L fl _ 5 (by decide) (off62_blk L T1) _ 1024 1840 inb_S2048_S1024_1024 inb_S2048_S16_1840 _ (by decide) (by decide) _ _ x) ?_
        refine View.forall_pieces_cons (fun x => step_trow (F := F) L fl _ 5 (by decide) (off62_blk L T1) _ 1024 1824 inb_S2048_S1024_1024 inb_S2048_S16_1824 _ (by decide) (by decide) _ _ x) ?_
        refine View.forall_pieces_cons (fun x => step_trow (F := F) L fl _ 5 (by decide) (off62_blk L T1) _ 1024 1808 inb_S2048_S1024_1024 inb_S2048_S16_1808 _ (by decide) (by decide) _ _ x) ?_
        refine View.forall_pieces_cons (fun x => step_trow (F := F) L fl _ 5 (by decide) (off62_blk L T1) _ 1024 1792 inb_S2048_S1024_1024 inb_S2048_S16_1792 _ (by decide) (by decide) _ _ x) ?_
        refine View.forall_pieces_cons (fun x => step_trow (F := F) L fl _ 5 (by decide) (off62_blk L T1) _ 1024 1776 inb_S2048_S1024_1024 inb_S2048_S16_1776 _ (by decide) (by decide) _ _ x) ?_
        refine View.forall_pieces_cons (fun x => step_trow (F := F) L fl _ 5 (by decide) (off62_blk L T1) _ 1024 1760 inb_S2048_S1024_1024 inb_S2048_S16_1760 _ (by decide) (by decide) _ _ x) ?_
        refine View.forall_pieces_cons (fun x => step_trow (F := F) L fl _ 5 (by decide) (off62_blk L T1) _ 1024 1744 inb_S2048_S1024_1024 inb_S2048_S16_1744 _ (by decide) (by decide) _ _ x) ?_
        refine View.forall_pieces_cons (fun x => step_trow (F := F) L fl _ 5 (by decide) (off62_blk L T1) _ 1024 1728 inb_S2048_S1024_1024 inb_S2048_S16_1728 _ (by decide) (by decide) _ _ x) ?_
        refine View.forall_pieces_cons (fun x => step_trow (F := F) L fl _ 5 (by decide) (off62_blk L T1) _ 1024 1712 inb_S2048_S1024_1024 inb_S2048_S16_1712 _ (by decide) (by decide) _ _ x) ?_
        refine View.forall_pieces_cons (fun x => step_trow (F := F) L fl _ 5 (by decide) (off62_blk L T1) _ 1024 1696 inb_S2048_S1024_1024 inb_S2048_S16_1696 _ (by decide) (by decide) _ _ x) ?_
        refine View.forall_pieces_cons (fun x => step_trow (F := F) L fl _ 5 (by decide) (off62_blk L T1) _ 1024 1680 inb_S2048_S1024_1024 inb_S2048_S16_1680 _ (by decide) (by decide) _ _ x) ?_
        refine View.forall_pieces_cons (fun x => step_trow (F := F) L fl _ 5 (by decide) (off62_blk L T1) _ 1024 1664 inb_S2048_S1024_1024 inb_S2048_S16_1664 _ (by decide) (by decide) _ _ x) ?_
        refine View.forall_pieces_cons (fun x => step_trow (F := F) L fl _ 5 (by decide) (off62_blk L T1) _ 1024 1648 inb_S2048_S1024_1024 inb_S2048_S16_1648 _ (by decide) (by decide) _ _ x) ?_
        refine View.forall_pieces_cons (fun x => step_trow (F := F) L fl _ 5 (by decide) (off62_blk L T1) _ 1024 1632 inb_S2048_S1024_1024 inb_S2048_S16_1632 _ (by decide) (by decide) _ _ x) ?_
        refine View.forall_pieces_cons (fun x => step_trow (F := F) L fl _ 5 (by decide) (off62_blk L T1) _ 1024 1616 inb_S2048_S1024_1024 inb_S2048_S16_1616 _ (by decide) (by decide) _ _ x) ?_
        refine View.forall_pieces_cons (fun x => step_trow (F := F) L fl _ 5 (by decide) (off62_blk L T1) _ 1024 1600 inb_S2048_S1024_1024 inb_S2048_S16_1600 _ (by decide) (by decide) _ _ x) ?_
        refine View.forall_pieces_cons (fun x => step_trow (F := F) L fl _ 5 (by decide) (off62_blk L T1) _ 1024 1584 inb_S2048_S1024_1024 inb_S2048_S16_1584 _ (by decide) (by decide) _ _ x) ?_
        refine View.forall_pieces_cons (fun x => step_trow (F := F) L fl _ 5 (by decide) (off62_blk L T1) _ 1024 1568 inb_S2048_S1024_1024 inb_S2048_S16_1568 _ (by decide) (by decide) _ _ x) ?_
        refine View.forall_pieces_cons (fun x => step_trow (F := F) L fl _ 5 (by decide) (off62_blk L T1) _ 1024 1552 inb_S2048_S1024_1024 inb_S2048_S16_1552 _ (by decide) (by decide) _ _ x) ?_
        refine View.forall_pieces_cons (fun x => step_trow (F := F) L fl _ 5 (by decide) (off62_blk L T1) _ 1024 1536 inb_S2048_S1024_1024 inb_S2048_S16_1536 _ (by decide) (by decide) _ _ x) ?_
        refine View.forall_pieces_cons (fun x => step_trow (F := F) L fl _ 5 (by decide) (off62_blk L T1) _ 1024 1520 inb_S2048_S1024_1024 inb_S2048_S16_1520 _ (by decide) (by decide) _ _ x) ?_
        refine View.forall_pieces_cons (fun x => step_trow (F := F) L fl _ 5 (by decide) (off62_blk L T1) _ 1024 1504 inb_S2048_S1024_1024 inb_S2048_S16_1504 _ (by decide) (by decide) _ _ x) ?_
        refine View.forall_pieces_cons (fun x => step_trow (F := F) L fl _ 5 (by decide) (off62_blk L T1) _ 1024 1488 inb_S2048_S1024_1024 inb_S2048_S16_1488 _ (by decide) (by decide) _ _ x) ?_
        refine View.forall_pieces_cons (fun x => step_trow (F := F) L fl _ 5 (by decide) (off62_blk L T1) _ 1024 1472 inb_S2048_S1024_1024 inb_S2048_S16_1472 _ (by decide) (by decide) _ _ x) ?_
        refine View.forall_pieces_cons (fun x => step_trow (F := F) L fl _ 5 (by decide) (off62_blk L T1) _ 1024 1456 inb_S2048_S1024_1024 inb_S2048_S16_1456 _ (by decide) (by decide) _ _ x) ?_
        refine View.forall_pieces_cons (fun x => step_trow (F := F) L fl _ 5 (by decide) (off62_blk L T1) _ 1024 1440 inb_S2048_S1024_1024 inb_S2048_S16_1440 _ (by decide) (by decide) _ _ x) ?_
        refine View.forall_pieces_cons (fun x => step_trow (F := F) L fl _ 5 (by decide) (off62_blk L T1) _ 1024 1424 inb_S2048_S1024_1024 inb_S2048_S16_1424 _ (by decide) (by decide) _ _ x) ?_
        refine View.forall_pieces_cons (fun x => step_trow (F := F) L fl _ 5 (by decide) (off62_blk L T1) _ 1024 1408 inb_S2048_S1024_1024 inb_S2048_S16_1408 _ (by decide) (by decide) _ _ x) ?_
        refine View.forall_pieces_cons (fun x => step_trow (F := F) L fl _ 5 (by decide) (off62_blk L T1) _ 1024 1392 inb_S2048_S1024_1024 inb_S2048_S16_1392 _ (by decide) (by decide) _ _ x) ?_
        refine View.forall_pieces_cons (fun x => step_trow (F := F) L fl _ 5 (by decide) (off62_blk L T1) _ 1024 1376 inb_S2048_S1024_1024 inb_S2048_S16_1376 _ (by decide) (by decide) _ _ x) ?_
        refine View.forall_pieces_cons (fun x => step_trow (F := F) L fl _ 5 (by decide) (off62_blk L T1) _ 1024 1360 inb_S2048_S1024_1024 inb_S2048_S16_1360 _ (by decide) (by decide) _ _ x) ?_
        refine View.forall_pieces_cons (fun x => step_trow (F := F) L fl _ 5 (by decide) (off62_blk L T1) _ 1024 1344 inb_S2048_S1024_1024 inb_S2048_S16_1344 _ (by decide) (by decide) _ _ x) ?_
        refine View.forall_pieces_cons (fun x => step_trow (F := F) L fl _ 5 (by decide) (off62_blk L T1) _ 1024 1328 inb_S2048_S1024_1024 inb_S2048_S16_1328 _ (by decide) (by decide) _ _ x) ?_
        refine View.forall_pieces_cons (fun x => step_trow (F := F) L fl _ 5 (by decide) (off62_blk L T1) _ 1024 1312 inb_S2048_S1024_1024 inb_S2048_S16_1312 _ (by decide) (by decide) _ _ x) ?_
        refine View.forall_pieces_cons (fun x => step_trow (F := F) L fl _ 5 (by decide) (off62_blk L T1) _ 1024 1296 inb_S2048_S1024_1024 inb_S2048_S16_1296 _ (by decide) (by decide) _ _ x) ?_
        refine View.forall_pieces_cons (fun x => step_trow (F := F) L fl _ 5 (by decide) (off62_blk L T1) _ 1024 1280 inb_S2048_S1024_1024 inb_S2048_S16_1280 _ (by decide) (by decide) _ _ x) ?_
        refine View.forall_pieces_cons (fun x => step_trow (F := F) L fl _ 5 (by decide) (off62_blk L T1) _ 1024 1264 inb_S2048_S1024_1024 inb_S2048_S16_1264 _ (by decide) (by decide) _ _ x) ?_
        refine View.forall_pieces_cons (fun x => step_trow (F := F) L fl _ 5 (by decide) (off62_blk L T1) _ 1024 1248 inb_S2048_S1024_1024 inb_S2048_S16_1248 _ (by decide) (by decide) _ _ x) ?_
        refine View.forall_pieces_cons (fun x => step_trow (F := F) L fl _ 5 (by decide) (off62_blk L T1) _ 1024 1232 inb_S2048_S1024_1024 inb_S2048_S16_1232 _ (by decide) (by decide) _ _ x) ?_
        refine View.forall_pieces_cons (fun x => step_trow (F := F) L fl _ 5 (by decide) (off62_blk L T1) _ 1024 1216 inb_S2048_S1024_1024 inb_S2048_S16_1216 _ (by decide) (by decide) _ _ x) ?_
        refine View.forall_pieces_cons (fun x => step_trow (F := F) L fl _ 5 (by decide) (off62_blk L T1) _ 1024 1200 inb_S2048_S1024_1024 inb_S2048_S16_1200 _ (by decide) (by decide) _ _ x) ?_
        refine View.forall_pieces_cons (fun x => step_trow (F := F) L fl _ 5 (by decide) (off62_blk L T1) _ 1024 1184 inb_S2048_S1024_1024 inb_S2048_S16_1184 _ (by decide) (by decide) _ _ x) ?_
        refine View.forall_pieces_cons (fun x => step_trow (F := F) L fl _ 5 (by decide) (off62_blk L T1) _ 1024 1168 inb_S2048_S1024_1024 inb_S2048_S16_1168 _ (by decide) (by decide) _ _ x) ?_
        refine View.forall_pieces_cons (fun x => step_trow (F := F) L fl _ 5 (by decide) (off62_blk L T1) _ 1024 1152 inb_S2048_S1024_1024 inb_S2048_S16_1152 _ (by decide) (by decide) _ _ x) ?_
        refine View.forall_pieces_cons (fun x => step_trow (F := F) L fl _ 5 (by decide) (off62_blk L T1) _ 1024 1136 inb_S2048_S1024_1024 inb_S2048_S16_1136 _ (by decide) (by decide) _ _ x) ?_
        refine View.forall_pieces_cons (fun x => step_trow (F := F) L fl _ 5 (by decide) (off62_blk L T1) _ 1024 1120 inb_S2048_S1024_1024 inb_S2048_S16_1120 _ (by decide) (by decide) _ _ x) ?_
        refine View.forall_pieces_cons (fun x => step_trow (F := F) L fl _ 5 (by decide) (off62_blk L T1) _ 1024 1104 inb_S2048_S1024_1024 inb_S2048_S16_1104 _ (by decide) (by decide) _ _ x) ?_
        refine View.forall_pieces_cons (fun x => step_trow (F := F) L fl _ 5 (by decide) (off62_blk L T1) _ 1024 1088 inb_S2048_S1024_1024 inb_S2048_S16_1088 _ (by decide) (by decide) _ _ x) ?_
        refine View.forall_pieces_cons (fun x => step_trow (F := F) L fl _ 5 (by decide) (off62_blk L T1) _ 1024 1072 inb_S2048_S1024_1024 inb_S2048_S16_1072 _ (by decide) (by decide) _ _ x) ?_
        refine View.forall_pieces_cons (fun x => step_trow (F := F) L fl _ 5 (by decide) (off62_blk L T1) _ 1024 1056 inb_S2048_S1024_1024 inb_S2048_S16_1056 _ (by decide) (by decide) _ _ x) ?_
        refine View.forall_pieces_cons (fun x => step_trow (F := F) L fl _ 5 (by decide) (off62_blk L T1) _ 1024 1040 inb_S2048_S1024_1024 inb_S2048_S16_1040 _ (by decide) (by decide) _ _ x) ?_
        refine View.forall_pieces_cons (fun x => step_trow (F := F) L fl _ 5 (by decide) (off62_blk L T1) _ 1024 1024 inb_S2048_S1024_1024 inb_S2048_S16_1024 _ (by decide) (by decide) _ _ x) ?_
        exact View.forall_pieces_nil
      ·
        refine View.forall_pieces_cons (fun x => step_tcol (F := F) L fl _ 5 (by decide) (off62_blk L T1) _ 1024 2032 inb_S2048_S1024_1024 inb_S2048_S16_2032 _ (by decide) (by decide) _ _ x) ?_
        refine View.forall_pieces_cons (fun x => step_tcol (F := F) L fl _ 5 (by decide) (off62_blk L T1) _ 1024 2016 inb_S2048_S1024_1024 inb_S2048_S16_2016 _ (by decide) (by decide) _ _ x) ?_
        refine View.forall_pieces_cons (fun x => step_tcol (F := F) L fl _ 5 (by decide) (off62_blk L T1) _ 1024 2000 inb_S2048_S1024_1024 inb_S2048_S16_2000 _ (by decide) (by decide) _ _ x) ?_
        refine View.forall_pieces_cons (fun x => step_tcol (F := F) L fl _ 5 (by decide) (off62_blk L T1) _ 1024 1984 inb_S2048_S1024_1024 inb_S2048_S16_1984 _ (by decide) (by decide) _ _ x) ?_
        refine View.forall_pieces_cons (fun x => step_tcol (F := F) L fl _ 5 (by decide) (off62_blk L T1) _ 1024 1968 inb_S2048_S1024_1024 inb_S2048_S16_1968 _ (by decide) (by decide) _ _ x) ?_
        refine View.forall_pieces_cons (fun x => step_tcol (F := F) L fl _ 5 (by decide) (off62_blk L T1) _ 1024 1952 inb_S2048_S1024_1024 inb_S2048_S16_1952 _ (by decide) (by decide) _ _ x) ?_
        refine View.forall_pieces_cons (fun x => step_tcol (F := F) L fl _ 5 (by decide) (off62_blk L T1) _ 1024 1936 inb_S2048_S1024_1024 inb_S2048_S16_1936 _ (by decide) (by decide) _ _ x) ?_
        refine View.forall_pieces_cons (fun x => step_tcol (F := F) L fl _ 5 (by decide) (off62_blk L T1) _ 1024 1920 inb_S2048_S1024_1024 inb_S2048_S16_1920 _ (by decide) (by decide) _ _ x) ?_
        refine View.forall_pieces_cons (fun x => step_tcol (F := F) L fl _ 5 (by decide) (off62_blk L T1) _ 1024 1904 inb_S2048_S1024_1024 inb_S2048_S16_1904 _ (by decide) (by decide) _ _ x) ?_
        refine View.forall_pieces_cons (fun x => step_tcol (F := F) L fl _ 5 (by decide) (off62_blk L T1) _ 1024 1888 inb_S2048_S1024_1024 inb_S2048_S16_1888 _ (by decide) (by decide) _ _ x) ?_
        refine View.forall_pieces_cons (fun x => step_tcol (F := F) L fl _ 5 (by decide) (off62_blk L T1) _ 1024 1872 inb_S2048_S1024_1024 inb_S2048_S16_1872 _ (by decide) (by decide) _ _ x) ?_
        refine View.forall_pieces_cons (fun x => step_tcol (F := F) L fl _ 5 (by decide) (off62_blk L T1) _ 1024 1856 inb_S2048_S1024_1024 inb_S2048_S16_1856 _ (by decide) (by decide) _ _ x) ?_
        refine View.forall_pieces_cons (fun x => step_tcol (F := F) L fl _ 5 (by decide) (off62_blk L T1) _ 1024 1840 inb_S2048_S1024_1024 inb_S2048_S16_1840 _ (by decide) (by decide) _ _ x) ?_
        refine View.forall_pieces_cons (fun x => step_tcol (F := F) L fl _ 5 (by decide) (off62_blk L T1) _ 1024 1824 inb_S2048_S1024_1024 inb_S2048_S16_1824 _ (by decide) (by decide) _ _ x) ?_
        refine View.forall_pieces_cons (fun x => step_tcol (F := F) L fl _ 5 (by decide) (off62_blk L T1) _ 1024 1808 inb_S2048_S1024_1024 inb_S2048_S16_1808 _ (by decide) (by decide) _ _ x) ?_
        refine View.forall_pieces_cons (fun x => step_tcol (F := F) L fl _ 5 (by decide) (off62_blk L T1) _ 1024 1792 inb_S2048_S1024_1024 inb_S2048_S16_1792 _ (by decide) (by decide) _ _ x) ?_
        refine View.forall_pieces_cons (fun x => step_tcol (F := F) L fl _ 5 (by decide) (off62_blk L T1) _ 1024 1776 inb_S2048_S1024_1024 inb_S2048_S16_1776 _ (by decide) (by decide) _ _ x) ?_
        refine View.forall_pieces_cons (fun x => step_tcol (F := F) L fl _ 5 (by decide) (off62_blk L T1) _ 1024 1760 inb_S2048_S1024_1024 inb_S2048_S16_1760 _ (by decide) (by decide) _ _ x) ?_
        refine View.forall_pieces_cons (fun x => step_tcol (F := F) L fl _ 5 (by decide) (off62_blk L T1) _ 1024 1744 inb_S2048_S1024_1024 inb_S2048_S16_1744 _ (by decide) (by decide) _ _ x) ?_
        refine View.forall_pieces_cons (fun x => step_tcol (F := F) L fl _ 5 (by decide) (off62_blk L T1) _ 1024 1728 inb_S2048_S1024_1024 inb_S2048_S16_1728 _ (by decide) (by decide) _ _ x) ?_
        refine View.forall_pieces_cons (fun x => step_tcol (F := F) L fl _ 5 (by decide) (off62_blk L T1) _ 1024 1712 inb_S2048_S1024_1024 inb_S2048_S16_1712 _ (by decide) (by decide) _ _ x) ?_
        refine View.forall_pieces_cons (fun x => step_tcol (F := F) L fl _ 5 (by decide) (off62_blk L T1) _ 1024 1696 inb_S2048_S1024_1024 inb_S2048_S16_1696 _ (by decide) (by decide) _ _ x) ?_
        refine View.forall_pieces_cons (fun x => step_tcol (F := F) L fl _ 5 (by decide) (off62_blk L T1) _ 1024 1680 inb_S2048_S1024_1024 inb_S2048_S16_1680 _ (by decide) (by decide) _ _ x) ?_
        refine View.forall_pieces_cons (fun x => step_tcol (F := F) L fl _ 5 (by decide) (off62_blk L T1) _ 1024 1664 inb_S2048_S1024_1024 inb_S2048_S16_1664 _ (by decide) (by decide) _ _ x) ?_
        refine View.forall_pieces_cons (fun x => step_tcol (F := F) L fl _ 5 (by decide) (off62_blk L T1) _ 1024 1648 inb_S2048_S1024_1024 inb_S2048_S16_1648 _ (by decide) (by decide) _ _ x) ?_
        refine View.forall_pieces_cons (fun x => step_tcol (F := F) L fl _ 5 (by decide) (off62_blk L T1) _ 1024 1632 inb_S2048_S1024_1024 inb_S2048_S16_1632 _ (by decide) (by decide) _ _ x) ?_
        refine View.forall_pieces_cons (fun x => step_tcol (F := F) L fl _ 5 (by decide) (off62_blk L T1) _ 1024 1616 inb_S2048_S1024_1024 inb_S2048_S16_1616 _ (by decide) (by decide) _ _ x) ?_
        refine View.forall_pieces_cons (fun x => step_tcol (F := F) L fl _ 5 (by decide) (off62_blk L T1) _ 1024 1600 inb_S2048_S1024_1024 inb_S2048_S16_1600 _ (by decide) (by decide) _ _ x) ?_
        refine View.forall_pieces_cons (fun x => step_tcol (F := F) L fl _ 5 (by decide) (off62_blk L T1) _ 1024 1584 inb_S2048_S1024_1024 inb_S2048_S16_1584 _ (by decide) (by decide) _ _ x) ?_
        refine View.forall_pieces_cons (fun x => step_tcol (F := F) L fl _ 5 (by decide) (off62_blk L T1) _ 1024 1568 inb_S2048_S1024_1024 inb_S2048_S16_1568 _ (by decide) (by decide) _ _ x) ?_
        refine View.forall_pieces_cons (fun x => step_tcol (F := F) L fl _ 5 (by decide) (off62_blk L T1) _ 1024 1552 inb_S2048_S1024_1024 inb_S2048_S16_1552 _ (by decide) (by decide) _ _ x) ?_
        refine View.forall_pieces_cons (fun x => step_tcol (F := F) L fl _ 5 (by decide) (off62_blk L T1) _ 1024 1536 inb_S2048_S1024_1024 inb_S2048_S16_1536 _ (by decide) (by decide) _ _ x) ?_
        refine View.forall_pieces_cons (fun x => step_tcol (F := F) L fl _ 5 (by decide) (off62_blk L T1) _ 1024 1520 inb_S2048_S1024_1024 inb_S2048_S16_1520 _ (by decide) (by decide) _ _ x) ?_
        refine View.forall_pieces_cons (fun x => step_tcol (F := F) L fl _ 5 (by decide) (off62_blk L T1) _ 1024 1504 inb_S2048_S1024_1024 inb_S2048_S16_1504 _ (by decide) (by decide) _ _ x) ?_
        refine View.forall_pieces_cons (fun x => step_tcol (F := F) L fl _ 5 (by decide) (off62_blk L T1) _ 1024 1488 inb_S2048_S1024_1024 inb_S2048_S16_1488 _ (by decide) (by decide) _ _ x) ?_
        refine View.forall_pieces_cons (fun x => step_tcol (F := F) L fl _ 5 (by decide) (off62_blk L T1) _ 1024 1472 inb_S2048_S1024_1024 inb_S2048_S16_1472 _ (by decide) (by decide) _ _ x) ?_
        refine View.forall_pieces_cons (fun x => step_tcol (F := F) L fl _ 5 (by decide) (off62_blk L T1) _ 1024 1456 inb_S2048_S1024_1024 inb_S2048_S16_1456 _ (by decide) (by decide) _ _ x) ?_
        refine View.forall_pieces_cons (fun x => step_tcol (F := F) L fl _ 5 (by decide) (off62_blk L T1) _ 1024 1440 inb_S2048_S1024_1024 inb_S2048_S16_1440 _ (by decide) (by decide) _ _ x) ?_
        refine View.forall_pieces_cons (fun x => step_tcol (F := F) L fl _ 5 (by decide) (off62_blk L T1) _ 1024 1424 inb_S2048_S1024_1024 inb_S2048_S16_1424 _ (by decide) (by decide) _ _ x) ?_
        refine View.forall_pieces_cons (fun x => step_tcol (F := F) L fl _ 5 (by decide) (off62_blk L T1) _ 1024 1408 inb_S2048_S1024_1024 inb_S2048_S16_1408 _ (by decide) (by decide) _ _ x) ?_
        refine View.forall_pieces_cons (fun x => step_tcol (F := F) L fl _ 5 (by decide) (off62_blk L T1) _ 1024 1392 inb_S2048_S1024_1024 inb_S2048_S16_1392 _ (by decide) (by decide) _ _ x) ?_
        refine View.forall_pieces_cons (fun x => step_tcol (F := F) L fl _ 5 (by decide) (off62_blk L T1) _ 1024 1376 inb_S2048_S1024_1024 inb_S2048_S16_1376 _ (by decide) (by decide) _ _ x) ?_
        refine View.forall_pieces_cons (fun x => step_tcol (F := F) L fl _ 5 (by decide) (off62_blk L T1) _ 1024 1360 inb_S2048_S1024_1024 inb_S2048_S16_1360 _ (by decide) (by decide) _ _ x) ?_
        refine View.forall_pieces_cons (fun x => step_tcol (F := F) L fl _ 5 (by decide) (off62_blk L T1) _ 1024 1344 inb_S2048_S1024_1024 inb_S2048_S16_1344 _ (by decide) (by decide) _ _ x) ?_
        refine View.forall_pieces_cons (fun x => step_tcol (F := F) L fl _ 5 (by decide) (off62_blk L T1) _ 1024 1328 inb_S2048_S1024_1024 inb_S2048_S16_1328 _ (by decide) (by decide) _ _ x) ?_
        refine View.forall_pieces_cons (fun x => step_tcol (F := F) L fl _ 5 (by decide) (off62_blk L T1) _ 1024 1312 inb_S2048_S1024_1024 inb_S2048_S16_1312 _ (by decide) (by decide) _ _ x) ?_
        refine View.forall_pieces_cons (fun x => step_tcol (F := F) L fl _ 5 (by decide) (off62_blk L T1) _ 1024 1296 inb_S2048_S1024_1024 inb_S2048_S16_1296 _ (by decide) (by decide) _ _ x) ?_
        refine View.forall_pieces_cons (fun x => step_tcol (F := F) L fl _ 5 (by decide) (off62_blk L T1) _ 1024 1280 inb_S2048_S1024_1024 inb_S2048_S16_1280 _ (by decide) (by decide) _ _ x) ?_
        refine View.forall_pieces_cons (fun x => step_tcol (F := F) L fl _ 5 (by decide) (off62_blk L T1) _ 1024 1264 inb_S2048_S1024_1024 inb_S2048_S16_1264 _ (by decide) (by decide) _ _ x) ?_
        refine View.forall_pieces_cons (fun x => step_tcol (F := F) L fl _ 5 (by decide) (off62_blk L T1) _ 1024 1248 inb_S2048_S1024_1024 inb_S2048_S16_1248 _ (by decide) (by decide) _ _ x) ?_
        refine View.forall_pieces_cons (fun x => step_tcol (F := F) L fl _ 5 (by decide) (off62_blk L T1) _ 1024 1232 inb_S2048_S1024_1024 inb_S2048_S16_1232 _ (by decide) (by decide) _ _ x) ?_
        refine View.forall_pieces_cons (fun x => step_tcol (F := F) L fl _ 5 (by decide) (off62_blk L T1) _ 1024 1216 inb_S2048_S1024_1024 inb_S2048_S16_1216 _ (by decide) (by decide) _ _ x) ?_
        refine View.forall_pieces_cons (fun x => step_tcol (F := F) L fl _ 5 (by decide) (off62_blk L T1) _ 1024 1200 inb_S2048_S1024_1024 inb_S2048_S16_1200 _ (by decide) (by decide) _ _ x) ?_
        refine View.forall_pieces_cons (fun x => step_tcol (F := F) L fl _ 5 (by decide) (off62_blk L T1) _ 1024 1184 inb_S2048_S1024_1024 inb_S2048_S16_1184 _ (by decide) (by decide) _ _ x) ?_
        refine View.forall_pieces_cons (fun x => step_tcol (F := F) L fl _ 5 (by decide) (off62_blk L T1) _ 1024 1168 inb_S2048_S1024_1024 inb_S2048_S16_1168 _ (by decide) (by decide) _ _ x) ?_
        refine View.forall_pieces_cons (fun x => step_tcol (F := F) L fl _ 5 (by decide) (off62_blk L T1) _ 1024 1152 inb_S2048_S1024_1024 inb_S2048_S16_1152 _ (by decide) (by decide) _ _ x) ?_
        refine View.forall_pieces_cons (fun x => step_tcol (F := F) L fl _ 5 (by decide) (off62_blk L T1) _ 1024 1136 inb_S2048_S1024_1024 inb_S2048_S16_1136 _ (by decide) (by decide) _ _ x) ?_
        refine View.forall_pieces_cons (fun x => step_tcol (F := F) L fl _ 5 (by decide) (off62_blk L T1) _ 1024 1120 inb_S2048_S1024_1024 inb_S2048_S16_1120 _ (by decide) (by decide) _ _ x) ?_
        refine View.forall_pieces_cons (fun x => step_tcol (F := F) L fl _ 5 (by decide) (off62_blk L T1) _ 1024 1104 inb_S2048_S1024_1024 inb_S2048_S16_1104 _ (by decide) (by decide) _ _ x) ?_
        refine View.forall_pieces_cons (fun x => step_tcol (F := F) L fl _ 5 (by decide) (off62_blk L T1) _ 1024 1088 inb_S2048_S1024_1024 inb_S2048_S16_1088 _ (by decide) (by decide) _ _ x) ?_
        refine View.forall_pieces_cons (fun x => step_tcol (F := F) L fl _ 5 (by decide) (off62_blk L T1) _ 1024 1072 inb_S2048_S1024_1024 inb_S2048_S16_1072 _ (by decide) (by decide) _ _ x) ?_
        refine View.forall_pieces_cons (fun x => step_tcol (F := F) L fl _ 5 (by decide) (off62_blk L T1) _ 1024 1056 inb_S2048_S1024_1024 inb_S2048_S16_1056 _ (by decide) (by decide) _ _ x) ?_
        refine View.forall_pieces_cons (fun x => step_tcol (F := F) L fl _ 5 (by decide) (off62_blk L T1) _ 1024 1040 inb_S2048_S1024_1024 inb_S2048_S16_1040 _ (by decide) (by decide) _ _ x) ?_
        refine View.forall_pieces_cons (fun x => step_tcol (F := F) L fl _ 5 (by decide) (off62_blk L T1) _ 1024 1024 inb_S2048_S1024_1024 inb_S2048_S16_1024 _ (by decide) (by decide) _ _ x) ?_
        exact View.forall_pieces_nil
  iintro %_ HI
  unfold inv0
  icases HI with ⟨-, %r4, %g14, %g24, %wb4, %o4, %ho4, ⟨%hT4, %hR4, %ho4_eq, %hV4⟩, Hg0, H1, Ht, H3, H2, H4r, Hg1, %W4, %hW4, HO⟩
  obtain rfl : o4 = ![1024] := ho4_eq.trans e8
  have hin4 := hin_of d L g14 hT4
  sl_exec_parts (disch := decide)
  -- odd block 5
  ihave H4j := (wb_join_b (F := F) d L _ _) $$ [H4r_2 H4r]
  · isplitl [H4r_2] <;> iassumption
  sl_for (inv1 d L fl qt tab O (insert (SemLoc.dma cc1_scratch7.sem, (default : HIx 1)) (insert (SemLoc.dma cc1_scratch10.sem, (default : HIx 1)) W4)) 5) $$ [Hmw Hg0 Ht H3 H1 H2 H4j Hg1 HO]
  case region => intro k _; exact pair1_region d L fl qt tab O _ T2 _ k
  · rw [inv1_flight (F := F) d L fl qt tab O _ 5 _ (Or.inl (by decide))]
    unfold invF
    isplitl [Hmw]; · iexact Hmw
    iexists _; iexists _; iexists _; iexists _; iexists ![1024]; iexists ho4
    isplitr; rotate_left
    · isplitl [Hg0]; rotate_left
      · isplitl [H1]; · iexact H1
        isplitl [Ht]; · iexact Ht
        isplitl [H3]; · iexact H3
        isplitl [H2]; · iexact H2
        isplitl [H4j]; · iexact H4j
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A5: the list's fifty words are not touched by the later stores
          intro i hi
          have hi0 := (mem_listM _ _ i).mp hi
          simp only [Matrix.cons_val_zero] at hi0
          exact (keep_word d L _ _ 0 (by rfl) i (by omega)).symm
    · ipureintro
      -- HOLE B5: the values at the loop's entry
      obtain ⟨hTh, hRh, hRowsh⟩ := even_to_odd d L fl tab 4 _ _ _ _ hV4
      have_entry odd_entry
      refine key hfl hTh hRh hRowsh ?_ (by rfl) ?_ (by rfl) (by unfold lo1; rfl)
      ·
        refine View.forall_pieces_cons (fun x => step_trow (F := F) L fl _ 6 (by decide) (off5_blk L T2) _ 0 1008 inb_S2048_S1024_0 inb_S2048_S16_1008 _ (by decide) (by decide) _ _ x) ?_
        refine View.forall_pieces_cons (fun x => step_trow (F := F) L fl _ 6 (by decide) (off5_blk L T2) _ 0 992 inb_S2048_S1024_0 inb_S2048_S16_992 _ (by decide) (by decide) _ _ x) ?_
        refine View.forall_pieces_cons (fun x => step_trow (F := F) L fl _ 6 (by decide) (off5_blk L T2) _ 0 976 inb_S2048_S1024_0 inb_S2048_S16_976 _ (by decide) (by decide) _ _ x) ?_
        refine View.forall_pieces_cons (fun x => step_trow (F := F) L fl _ 6 (by decide) (off5_blk L T2) _ 0 960 inb_S2048_S1024_0 inb_S2048_S16_960 _ (by decide) (by decide) _ _ x) ?_
        refine View.forall_pieces_cons (fun x => step_trow (F := F) L fl _ 6 (by decide) (off5_blk L T2) _ 0 944 inb_S2048_S1024_0 inb_S2048_S16_944 _ (by decide) (by decide) _ _ x) ?_
        refine View.forall_pieces_cons (fun x => step_trow (F := F) L fl _ 6 (by decide) (off5_blk L T2) _ 0 928 inb_S2048_S1024_0 inb_S2048_S16_928 _ (by decide) (by decide) _ _ x) ?_
        refine View.forall_pieces_cons (fun x => step_trow (F := F) L fl _ 6 (by decide) (off5_blk L T2) _ 0 912 inb_S2048_S1024_0 inb_S2048_S16_912 _ (by decide) (by decide) _ _ x) ?_
        refine View.forall_pieces_cons (fun x => step_trow (F := F) L fl _ 6 (by decide) (off5_blk L T2) _ 0 896 inb_S2048_S1024_0 inb_S2048_S16_896 _ (by decide) (by decide) _ _ x) ?_
        refine View.forall_pieces_cons (fun x => step_trow (F := F) L fl _ 6 (by decide) (off5_blk L T2) _ 0 880 inb_S2048_S1024_0 inb_S2048_S16_880 _ (by decide) (by decide) _ _ x) ?_
        refine View.forall_pieces_cons (fun x => step_trow (F := F) L fl _ 6 (by decide) (off5_blk L T2) _ 0 864 inb_S2048_S1024_0 inb_S2048_S16_864 _ (by decide) (by decide) _ _ x) ?_
        refine View.forall_pieces_cons (fun x => step_trow (F := F) L fl _ 6 (by decide) (off5_blk L T2) _ 0 848 inb_S2048_S1024_0 inb_S2048_S16_848 _ (by decide) (by decide) _ _ x) ?_
        refine View.forall_pieces_cons (fun x => step_trow (F := F) L fl _ 6 (by decide) (off5_blk L T2) _ 0 832 inb_S2048_S1024_0 inb_S2048_S16_832 _ (by decide) (by decide) _ _ x) ?_
        refine View.forall_pieces_cons (fun x => step_trow (F := F) L fl _ 6 (by decide) (off5_blk L T2) _ 0 816 inb_S2048_S1024_0 inb_S2048_S16_816 _ (by decide) (by decide) _ _ x) ?_
        refine View.forall_pieces_cons (fun x => step_trow (F := F) L fl _ 6 (by decide) (off5_blk L T2) _ 0 800 inb_S2048_S1024_0 inb_S2048_S16_800 _ (by decide) (by decide) _ _ x) ?_
        refine View.forall_pieces_cons (fun x => step_trow (F := F) L fl _ 6 (by decide) (off5_blk L T2) _ 0 784 inb_S2048_S1024_0 inb_S2048_S16_784 _ (by decide) (by decide) _ _ x) ?_
        refine View.forall_pieces_cons (fun x => step_trow (F := F) L fl _ 6 (by decide) (off5_blk L T2) _ 0 768 inb_S2048_S1024_0 inb_S2048_S16_768 _ (by decide) (by decide) _ _ x) ?_
        refine View.forall_pieces_cons (fun x => step_trow (F := F) L fl _ 6 (by decide) (off5_blk L T2) _ 0 752 inb_S2048_S1024_0 inb_S2048_S16_752 _ (by decide) (by decide) _ _ x) ?_
        refine View.forall_pieces_cons (fun x => step_trow (F := F) L fl _ 6 (by decide) (off5_blk L T2) _ 0 736 inb_S2048_S1024_0 inb_S2048_S16_736 _ (by decide) (by decide) _ _ x) ?_
        refine View.forall_pieces_cons (fun x => step_trow (F := F) L fl _ 6 (by decide) (off5_blk L T2) _ 0 720 inb_S2048_S1024_0 inb_S2048_S16_720 _ (by decide) (by decide) _ _ x) ?_
        refine View.forall_pieces_cons (fun x => step_trow (F := F) L fl _ 6 (by decide) (off5_blk L T2) _ 0 704 inb_S2048_S1024_0 inb_S2048_S16_704 _ (by decide) (by decide) _ _ x) ?_
        refine View.forall_pieces_cons (fun x => step_trow (F := F) L fl _ 6 (by decide) (off5_blk L T2) _ 0 688 inb_S2048_S1024_0 inb_S2048_S16_688 _ (by decide) (by decide) _ _ x) ?_
        refine View.forall_pieces_cons (fun x => step_trow (F := F) L fl _ 6 (by decide) (off5_blk L T2) _ 0 672 inb_S2048_S1024_0 inb_S2048_S16_672 _ (by decide) (by decide) _ _ x) ?_
        refine View.forall_pieces_cons (fun x => step_trow (F := F) L fl _ 6 (by decide) (off5_blk L T2) _ 0 656 inb_S2048_S1024_0 inb_S2048_S16_656 _ (by decide) (by decide) _ _ x) ?_
        refine View.forall_pieces_cons (fun x => step_trow (F := F) L fl _ 6 (by decide) (off5_blk L T2) _ 0 640 inb_S2048_S1024_0 inb_S2048_S16_640 _ (by decide) (by decide) _ _ x) ?_
        refine View.forall_pieces_cons (fun x => step_trow (F := F) L fl _ 6 (by decide) (off5_blk L T2) _ 0 624 inb_S2048_S1024_0 inb_S2048_S16_624 _ (by decide) (by decide) _ _ x) ?_
        refine View.forall_pieces_cons (fun x => step_trow (F := F) L fl _ 6 (by decide) (off5_blk L T2) _ 0 608 inb_S2048_S1024_0 inb_S2048_S16_608 _ (by decide) (by decide) _ _ x) ?_
        refine View.forall_pieces_cons (fun x => step_trow (F := F) L fl _ 6 (by decide) (off5_blk L T2) _ 0 592 inb_S2048_S1024_0 inb_S2048_S16_592 _ (by decide) (by decide) _ _ x) ?_
        refine View.forall_pieces_cons (fun x => step_trow (F := F) L fl _ 6 (by decide) (off5_blk L T2) _ 0 576 inb_S2048_S1024_0 inb_S2048_S16_576 _ (by decide) (by decide) _ _ x) ?_
        refine View.forall_pieces_cons (fun x => step_trow (F := F) L fl _ 6 (by decide) (off5_blk L T2) _ 0 560 inb_S2048_S1024_0 inb_S2048_S16_560 _ (by decide) (by decide) _ _ x) ?_
        refine View.forall_pieces_cons (fun x => step_trow (F := F) L fl _ 6 (by decide) (off5_blk L T2) _ 0 544 inb_S2048_S1024_0 inb_S2048_S16_544 _ (by decide) (by decide) _ _ x) ?_
        refine View.forall_pieces_cons (fun x => step_trow (F := F) L fl _ 6 (by decide) (off5_blk L T2) _ 0 528 inb_S2048_S1024_0 inb_S2048_S16_528 _ (by decide) (by decide) _ _ x) ?_
        refine View.forall_pieces_cons (fun x => step_trow (F := F) L fl _ 6 (by decide) (off5_blk L T2) _ 0 512 inb_S2048_S1024_0 inb_S2048_S16_512 _ (by decide) (by decide) _ _ x) ?_
        refine View.forall_pieces_cons (fun x => step_trow (F := F) L fl _ 6 (by decide) (off5_blk L T2) _ 0 496 inb_S2048_S1024_0 inb_S2048_S16_496 _ (by decide) (by decide) _ _ x) ?_
        refine View.forall_pieces_cons (fun x => step_trow (F := F) L fl _ 6 (by decide) (off5_blk L T2) _ 0 480 inb_S2048_S1024_0 inb_S2048_S16_480 _ (by decide) (by decide) _ _ x) ?_
        refine View.forall_pieces_cons (fun x => step_trow (F := F) L fl _ 6 (by decide) (off5_blk L T2) _ 0 464 inb_S2048_S1024_0 inb_S2048_S16_464 _ (by decide) (by decide) _ _ x) ?_
        refine View.forall_pieces_cons (fun x => step_trow (F := F) L fl _ 6 (by decide) (off5_blk L T2) _ 0 448 inb_S2048_S1024_0 inb_S2048_S16_448 _ (by decide) (by decide) _ _ x) ?_
        refine View.forall_pieces_cons (fun x => step_trow (F := F) L fl _ 6 (by decide) (off5_blk L T2) _ 0 432 inb_S2048_S1024_0 inb_S2048_S16_432 _ (by decide) (by decide) _ _ x) ?_
        refine View.forall_pieces_cons (fun x => step_trow (F := F) L fl _ 6 (by decide) (off5_blk L T2) _ 0 416 inb_S2048_S1024_0 inb_S2048_S16_416 _ (by decide) (by decide) _ _ x) ?_
        refine View.forall_pieces_cons (fun x => step_trow (F := F) L fl _ 6 (by decide) (off5_blk L T2) _ 0 400 inb_S2048_S1024_0 inb_S2048_S16_400 _ (by decide) (by decide) _ _ x) ?_
        refine View.forall_pieces_cons (fun x => step_trow (F := F) L fl _ 6 (by decide) (off5_blk L T2) _ 0 384 inb_S2048_S1024_0 inb_S2048_S16_384 _ (by decide) (by decide) _ _ x) ?_
        refine View.forall_pieces_cons (fun x => step_trow (F := F) L fl _ 6 (by decide) (off5_blk L T2) _ 0 368 inb_S2048_S1024_0 inb_S2048_S16_368 _ (by decide) (by decide) _ _ x) ?_
        refine View.forall_pieces_cons (fun x => step_trow (F := F) L fl _ 6 (by decide) (off5_blk L T2) _ 0 352 inb_S2048_S1024_0 inb_S2048_S16_352 _ (by decide) (by decide) _ _ x) ?_
        refine View.forall_pieces_cons (fun x => step_trow (F := F) L fl _ 6 (by decide) (off5_blk L T2) _ 0 336 inb_S2048_S1024_0 inb_S2048_S16_336 _ (by decide) (by decide) _ _ x) ?_
        refine View.forall_pieces_cons (fun x => step_trow (F := F) L fl _ 6 (by decide) (off5_blk L T2) _ 0 320 inb_S2048_S1024_0 inb_S2048_S16_320 _ (by decide) (by decide) _ _ x) ?_
        refine View.forall_pieces_cons (fun x => step_trow (F := F) L fl _ 6 (by decide) (off5_blk L T2) _ 0 304 inb_S2048_S1024_0 inb_S2048_S16_304 _ (by decide) (by decide) _ _ x) ?_
        refine View.forall_pieces_cons (fun x => step_trow (F := F) L fl _ 6 (by decide) (off5_blk L T2) _ 0 288 inb_S2048_S1024_0 inb_S2048_S16_288 _ (by decide) (by decide) _ _ x) ?_
        refine View.forall_pieces_cons (fun x => step_trow (F := F) L fl _ 6 (by decide) (off5_blk L T2) _ 0 272 inb_S2048_S1024_0 inb_S2048_S16_272 _ (by decide) (by decide) _ _ x) ?_
        refine View.forall_pieces_cons (fun x => step_trow (F := F) L fl _ 6 (by decide) (off5_blk L T2) _ 0 256 inb_S2048_S1024_0 inb_S2048_S16_256 _ (by decide) (by decide) _ _ x) ?_
        refine View.forall_pieces_cons (fun x => step_trow (F := F) L fl _ 6 (by decide) (off5_blk L T2) _ 0 240 inb_S2048_S1024_0 inb_S2048_S16_240 _ (by decide) (by decide) _ _ x) ?_
        refine View.forall_pieces_cons (fun x => step_trow (F := F) L fl _ 6 (by decide) (off5_blk L T2) _ 0 224 inb_S2048_S1024_0 inb_S2048_S16_224 _ (by decide) (by decide) _ _ x) ?_
        refine View.forall_pieces_cons (fun x => step_trow (F := F) L fl _ 6 (by decide) (off5_blk L T2) _ 0 208 inb_S2048_S1024_0 inb_S2048_S16_208 _ (by decide) (by decide) _ _ x) ?_
        refine View.forall_pieces_cons (fun x => step_trow (F := F) L fl _ 6 (by decide) (off5_blk L T2) _ 0 192 inb_S2048_S1024_0 inb_S2048_S16_192 _ (by decide) (by decide) _ _ x) ?_
        refine View.forall_pieces_cons (fun x => step_trow (F := F) L fl _ 6 (by decide) (off5_blk L T2) _ 0 176 inb_S2048_S1024_0 inb_S2048_S16_176 _ (by decide) (by decide) _ _ x) ?_
        refine View.forall_pieces_cons (fun x => step_trow (F := F) L fl _ 6 (by decide) (off5_blk L T2) _ 0 160 inb_S2048_S1024_0 inb_S2048_S16_160 _ (by decide) (by decide) _ _ x) ?_
        refine View.forall_pieces_cons (fun x => step_trow (F := F) L fl _ 6 (by decide) (off5_blk L T2) _ 0 144 inb_S2048_S1024_0 inb_S2048_S16_144 _ (by decide) (by decide) _ _ x) ?_
        refine View.forall_pieces_cons (fun x => step_trow (F := F) L fl _ 6 (by decide) (off5_blk L T2) _ 0 128 inb_S2048_S1024_0 inb_S2048_S16_128 _ (by decide) (by decide) _ _ x) ?_
        refine View.forall_pieces_cons (fun x => step_trow (F := F) L fl _ 6 (by decide) (off5_blk L T2) _ 0 112 inb_S2048_S1024_0 inb_S2048_S16_112 _ (by decide) (by decide) _ _ x) ?_
        refine View.forall_pieces_cons (fun x => step_trow (F := F) L fl _ 6 (by decide) (off5_blk L T2) _ 0 96 inb_S2048_S1024_0 inb_S2048_S16_96 _ (by decide) (by decide) _ _ x) ?_
        refine View.forall_pieces_cons (fun x => step_trow (F := F) L fl _ 6 (by decide) (off5_blk L T2) _ 0 80 inb_S2048_S1024_0 inb_S2048_S16_80 _ (by decide) (by decide) _ _ x) ?_
        refine View.forall_pieces_cons (fun x => step_trow (F := F) L fl _ 6 (by decide) (off5_blk L T2) _ 0 64 inb_S2048_S1024_0 inb_S2048_S16_64 _ (by decide) (by decide) _ _ x) ?_
        refine View.forall_pieces_cons (fun x => step_trow (F := F) L fl _ 6 (by decide) (off5_blk L T2) _ 0 48 inb_S2048_S1024_0 inb_S2048_S16_48 _ (by decide) (by decide) _ _ x) ?_
        refine View.forall_pieces_cons (fun x => step_trow (F := F) L fl _ 6 (by decide) (off5_blk L T2) _ 0 32 inb_S2048_S1024_0 inb_S2048_S16_32 _ (by decide) (by decide) _ _ x) ?_
        refine View.forall_pieces_cons (fun x => step_trow (F := F) L fl _ 6 (by decide) (off5_blk L T2) _ 0 16 inb_S2048_S1024_0 inb_S2048_S16_16 _ (by decide) (by decide) _ _ x) ?_
        refine View.forall_pieces_cons (fun x => step_trow (F := F) L fl _ 6 (by decide) (off5_blk L T2) _ 0 0 inb_S2048_S1024_0 inb_S2048_S16_0 _ (by decide) (by decide) _ _ x) ?_
        exact View.forall_pieces_nil
      ·
        refine View.forall_pieces_cons (fun x => step_tcol (F := F) L fl _ 6 (by decide) (off5_blk L T2) _ 0 1008 inb_S2048_S1024_0 inb_S2048_S16_1008 _ (by decide) (by decide) _ _ x) ?_
        refine View.forall_pieces_cons (fun x => step_tcol (F := F) L fl _ 6 (by decide) (off5_blk L T2) _ 0 992 inb_S2048_S1024_0 inb_S2048_S16_992 _ (by decide) (by decide) _ _ x) ?_
        refine View.forall_pieces_cons (fun x => step_tcol (F := F) L fl _ 6 (by decide) (off5_blk L T2) _ 0 976 inb_S2048_S1024_0 inb_S2048_S16_976 _ (by decide) (by decide) _ _ x) ?_
        refine View.forall_pieces_cons (fun x => step_tcol (F := F) L fl _ 6 (by decide) (off5_blk L T2) _ 0 960 inb_S2048_S1024_0 inb_S2048_S16_960 _ (by decide) (by decide) _ _ x) ?_
        refine View.forall_pieces_cons (fun x => step_tcol (F := F) L fl _ 6 (by decide) (off5_blk L T2) _ 0 944 inb_S2048_S1024_0 inb_S2048_S16_944 _ (by decide) (by decide) _ _ x) ?_
        refine View.forall_pieces_cons (fun x => step_tcol (F := F) L fl _ 6 (by decide) (off5_blk L T2) _ 0 928 inb_S2048_S1024_0 inb_S2048_S16_928 _ (by decide) (by decide) _ _ x) ?_
        refine View.forall_pieces_cons (fun x => step_tcol (F := F) L fl _ 6 (by decide) (off5_blk L T2) _ 0 912 inb_S2048_S1024_0 inb_S2048_S16_912 _ (by decide) (by decide) _ _ x) ?_
        refine View.forall_pieces_cons (fun x => step_tcol (F := F) L fl _ 6 (by decide) (off5_blk L T2) _ 0 896 inb_S2048_S1024_0 inb_S2048_S16_896 _ (by decide) (by decide) _ _ x) ?_
        refine View.forall_pieces_cons (fun x => step_tcol (F := F) L fl _ 6 (by decide) (off5_blk L T2) _ 0 880 inb_S2048_S1024_0 inb_S2048_S16_880 _ (by decide) (by decide) _ _ x) ?_
        refine View.forall_pieces_cons (fun x => step_tcol (F := F) L fl _ 6 (by decide) (off5_blk L T2) _ 0 864 inb_S2048_S1024_0 inb_S2048_S16_864 _ (by decide) (by decide) _ _ x) ?_
        refine View.forall_pieces_cons (fun x => step_tcol (F := F) L fl _ 6 (by decide) (off5_blk L T2) _ 0 848 inb_S2048_S1024_0 inb_S2048_S16_848 _ (by decide) (by decide) _ _ x) ?_
        refine View.forall_pieces_cons (fun x => step_tcol (F := F) L fl _ 6 (by decide) (off5_blk L T2) _ 0 832 inb_S2048_S1024_0 inb_S2048_S16_832 _ (by decide) (by decide) _ _ x) ?_
        refine View.forall_pieces_cons (fun x => step_tcol (F := F) L fl _ 6 (by decide) (off5_blk L T2) _ 0 816 inb_S2048_S1024_0 inb_S2048_S16_816 _ (by decide) (by decide) _ _ x) ?_
        refine View.forall_pieces_cons (fun x => step_tcol (F := F) L fl _ 6 (by decide) (off5_blk L T2) _ 0 800 inb_S2048_S1024_0 inb_S2048_S16_800 _ (by decide) (by decide) _ _ x) ?_
        refine View.forall_pieces_cons (fun x => step_tcol (F := F) L fl _ 6 (by decide) (off5_blk L T2) _ 0 784 inb_S2048_S1024_0 inb_S2048_S16_784 _ (by decide) (by decide) _ _ x) ?_
        refine View.forall_pieces_cons (fun x => step_tcol (F := F) L fl _ 6 (by decide) (off5_blk L T2) _ 0 768 inb_S2048_S1024_0 inb_S2048_S16_768 _ (by decide) (by decide) _ _ x) ?_
        refine View.forall_pieces_cons (fun x => step_tcol (F := F) L fl _ 6 (by decide) (off5_blk L T2) _ 0 752 inb_S2048_S1024_0 inb_S2048_S16_752 _ (by decide) (by decide) _ _ x) ?_
        refine View.forall_pieces_cons (fun x => step_tcol (F := F) L fl _ 6 (by decide) (off5_blk L T2) _ 0 736 inb_S2048_S1024_0 inb_S2048_S16_736 _ (by decide) (by decide) _ _ x) ?_
        refine View.forall_pieces_cons (fun x => step_tcol (F := F) L fl _ 6 (by decide) (off5_blk L T2) _ 0 720 inb_S2048_S1024_0 inb_S2048_S16_720 _ (by decide) (by decide) _ _ x) ?_
        refine View.forall_pieces_cons (fun x => step_tcol (F := F) L fl _ 6 (by decide) (off5_blk L T2) _ 0 704 inb_S2048_S1024_0 inb_S2048_S16_704 _ (by decide) (by decide) _ _ x) ?_
        refine View.forall_pieces_cons (fun x => step_tcol (F := F) L fl _ 6 (by decide) (off5_blk L T2) _ 0 688 inb_S2048_S1024_0 inb_S2048_S16_688 _ (by decide) (by decide) _ _ x) ?_
        refine View.forall_pieces_cons (fun x => step_tcol (F := F) L fl _ 6 (by decide) (off5_blk L T2) _ 0 672 inb_S2048_S1024_0 inb_S2048_S16_672 _ (by decide) (by decide) _ _ x) ?_
        refine View.forall_pieces_cons (fun x => step_tcol (F := F) L fl _ 6 (by decide) (off5_blk L T2) _ 0 656 inb_S2048_S1024_0 inb_S2048_S16_656 _ (by decide) (by decide) _ _ x) ?_
        refine View.forall_pieces_cons (fun x => step_tcol (F := F) L fl _ 6 (by decide) (off5_blk L T2) _ 0 640 inb_S2048_S1024_0 inb_S2048_S16_640 _ (by decide) (by decide) _ _ x) ?_
        refine View.forall_pieces_cons (fun x => step_tcol (F := F) L fl _ 6 (by decide) (off5_blk L T2) _ 0 624 inb_S2048_S1024_0 inb_S2048_S16_624 _ (by decide) (by decide) _ _ x) ?_
        refine View.forall_pieces_cons (fun x => step_tcol (F := F) L fl _ 6 (by decide) (off5_blk L T2) _ 0 608 inb_S2048_S1024_0 inb_S2048_S16_608 _ (by decide) (by decide) _ _ x) ?_
        refine View.forall_pieces_cons (fun x => step_tcol (F := F) L fl _ 6 (by decide) (off5_blk L T2) _ 0 592 inb_S2048_S1024_0 inb_S2048_S16_592 _ (by decide) (by decide) _ _ x) ?_
        refine View.forall_pieces_cons (fun x => step_tcol (F := F) L fl _ 6 (by decide) (off5_blk L T2) _ 0 576 inb_S2048_S1024_0 inb_S2048_S16_576 _ (by decide) (by decide) _ _ x) ?_
        refine View.forall_pieces_cons (fun x => step_tcol (F := F) L fl _ 6 (by decide) (off5_blk L T2) _ 0 560 inb_S2048_S1024_0 inb_S2048_S16_560 _ (by decide) (by decide) _ _ x) ?_
        refine View.forall_pieces_cons (fun x => step_tcol (F := F) L fl _ 6 (by decide) (off5_blk L T2) _ 0 544 inb_S2048_S1024_0 inb_S2048_S16_544 _ (by decide) (by decide) _ _ x) ?_
        refine View.forall_pieces_cons (fun x => step_tcol (F := F) L fl _ 6 (by decide) (off5_blk L T2) _ 0 528 inb_S2048_S1024_0 inb_S2048_S16_528 _ (by decide) (by decide) _ _ x) ?_
        refine View.forall_pieces_cons (fun x => step_tcol (F := F) L fl _ 6 (by decide) (off5_blk L T2) _ 0 512 inb_S2048_S1024_0 inb_S2048_S16_512 _ (by decide) (by decide) _ _ x) ?_
        refine View.forall_pieces_cons (fun x => step_tcol (F := F) L fl _ 6 (by decide) (off5_blk L T2) _ 0 496 inb_S2048_S1024_0 inb_S2048_S16_496 _ (by decide) (by decide) _ _ x) ?_
        refine View.forall_pieces_cons (fun x => step_tcol (F := F) L fl _ 6 (by decide) (off5_blk L T2) _ 0 480 inb_S2048_S1024_0 inb_S2048_S16_480 _ (by decide) (by decide) _ _ x) ?_
        refine View.forall_pieces_cons (fun x => step_tcol (F := F) L fl _ 6 (by decide) (off5_blk L T2) _ 0 464 inb_S2048_S1024_0 inb_S2048_S16_464 _ (by decide) (by decide) _ _ x) ?_
        refine View.forall_pieces_cons (fun x => step_tcol (F := F) L fl _ 6 (by decide) (off5_blk L T2) _ 0 448 inb_S2048_S1024_0 inb_S2048_S16_448 _ (by decide) (by decide) _ _ x) ?_
        refine View.forall_pieces_cons (fun x => step_tcol (F := F) L fl _ 6 (by decide) (off5_blk L T2) _ 0 432 inb_S2048_S1024_0 inb_S2048_S16_432 _ (by decide) (by decide) _ _ x) ?_
        refine View.forall_pieces_cons (fun x => step_tcol (F := F) L fl _ 6 (by decide) (off5_blk L T2) _ 0 416 inb_S2048_S1024_0 inb_S2048_S16_416 _ (by decide) (by decide) _ _ x) ?_
        refine View.forall_pieces_cons (fun x => step_tcol (F := F) L fl _ 6 (by decide) (off5_blk L T2) _ 0 400 inb_S2048_S1024_0 inb_S2048_S16_400 _ (by decide) (by decide) _ _ x) ?_
        refine View.forall_pieces_cons (fun x => step_tcol (F := F) L fl _ 6 (by decide) (off5_blk L T2) _ 0 384 inb_S2048_S1024_0 inb_S2048_S16_384 _ (by decide) (by decide) _ _ x) ?_
        refine View.forall_pieces_cons (fun x => step_tcol (F := F) L fl _ 6 (by decide) (off5_blk L T2) _ 0 368 inb_S2048_S1024_0 inb_S2048_S16_368 _ (by decide) (by decide) _ _ x) ?_
        refine View.forall_pieces_cons (fun x => step_tcol (F := F) L fl _ 6 (by decide) (off5_blk L T2) _ 0 352 inb_S2048_S1024_0 inb_S2048_S16_352 _ (by decide) (by decide) _ _ x) ?_
        refine View.forall_pieces_cons (fun x => step_tcol (F := F) L fl _ 6 (by decide) (off5_blk L T2) _ 0 336 inb_S2048_S1024_0 inb_S2048_S16_336 _ (by decide) (by decide) _ _ x) ?_
        refine View.forall_pieces_cons (fun x => step_tcol (F := F) L fl _ 6 (by decide) (off5_blk L T2) _ 0 320 inb_S2048_S1024_0 inb_S2048_S16_320 _ (by decide) (by decide) _ _ x) ?_
        refine View.forall_pieces_cons (fun x => step_tcol (F := F) L fl _ 6 (by decide) (off5_blk L T2) _ 0 304 inb_S2048_S1024_0 inb_S2048_S16_304 _ (by decide) (by decide) _ _ x) ?_
        refine View.forall_pieces_cons (fun x => step_tcol (F := F) L fl _ 6 (by decide) (off5_blk L T2) _ 0 288 inb_S2048_S1024_0 inb_S2048_S16_288 _ (by decide) (by decide) _ _ x) ?_
        refine View.forall_pieces_cons (fun x => step_tcol (F := F) L fl _ 6 (by decide) (off5_blk L T2) _ 0 272 inb_S2048_S1024_0 inb_S2048_S16_272 _ (by decide) (by decide) _ _ x) ?_
        refine View.forall_pieces_cons (fun x => step_tcol (F := F) L fl _ 6 (by decide) (off5_blk L T2) _ 0 256 inb_S2048_S1024_0 inb_S2048_S16_256 _ (by decide) (by decide) _ _ x) ?_
        refine View.forall_pieces_cons (fun x => step_tcol (F := F) L fl _ 6 (by decide) (off5_blk L T2) _ 0 240 inb_S2048_S1024_0 inb_S2048_S16_240 _ (by decide) (by decide) _ _ x) ?_
        refine View.forall_pieces_cons (fun x => step_tcol (F := F) L fl _ 6 (by decide) (off5_blk L T2) _ 0 224 inb_S2048_S1024_0 inb_S2048_S16_224 _ (by decide) (by decide) _ _ x) ?_
        refine View.forall_pieces_cons (fun x => step_tcol (F := F) L fl _ 6 (by decide) (off5_blk L T2) _ 0 208 inb_S2048_S1024_0 inb_S2048_S16_208 _ (by decide) (by decide) _ _ x) ?_
        refine View.forall_pieces_cons (fun x => step_tcol (F := F) L fl _ 6 (by decide) (off5_blk L T2) _ 0 192 inb_S2048_S1024_0 inb_S2048_S16_192 _ (by decide) (by decide) _ _ x) ?_
        refine View.forall_pieces_cons (fun x => step_tcol (F := F) L fl _ 6 (by decide) (off5_blk L T2) _ 0 176 inb_S2048_S1024_0 inb_S2048_S16_176 _ (by decide) (by decide) _ _ x) ?_
        refine View.forall_pieces_cons (fun x => step_tcol (F := F) L fl _ 6 (by decide) (off5_blk L T2) _ 0 160 inb_S2048_S1024_0 inb_S2048_S16_160 _ (by decide) (by decide) _ _ x) ?_
        refine View.forall_pieces_cons (fun x => step_tcol (F := F) L fl _ 6 (by decide) (off5_blk L T2) _ 0 144 inb_S2048_S1024_0 inb_S2048_S16_144 _ (by decide) (by decide) _ _ x) ?_
        refine View.forall_pieces_cons (fun x => step_tcol (F := F) L fl _ 6 (by decide) (off5_blk L T2) _ 0 128 inb_S2048_S1024_0 inb_S2048_S16_128 _ (by decide) (by decide) _ _ x) ?_
        refine View.forall_pieces_cons (fun x => step_tcol (F := F) L fl _ 6 (by decide) (off5_blk L T2) _ 0 112 inb_S2048_S1024_0 inb_S2048_S16_112 _ (by decide) (by decide) _ _ x) ?_
        refine View.forall_pieces_cons (fun x => step_tcol (F := F) L fl _ 6 (by decide) (off5_blk L T2) _ 0 96 inb_S2048_S1024_0 inb_S2048_S16_96 _ (by decide) (by decide) _ _ x) ?_
        refine View.forall_pieces_cons (fun x => step_tcol (F := F) L fl _ 6 (by decide) (off5_blk L T2) _ 0 80 inb_S2048_S1024_0 inb_S2048_S16_80 _ (by decide) (by decide) _ _ x) ?_
        refine View.forall_pieces_cons (fun x => step_tcol (F := F) L fl _ 6 (by decide) (off5_blk L T2) _ 0 64 inb_S2048_S1024_0 inb_S2048_S16_64 _ (by decide) (by decide) _ _ x) ?_
        refine View.forall_pieces_cons (fun x => step_tcol (F := F) L fl _ 6 (by decide) (off5_blk L T2) _ 0 48 inb_S2048_S1024_0 inb_S2048_S16_48 _ (by decide) (by decide) _ _ x) ?_
        refine View.forall_pieces_cons (fun x => step_tcol (F := F) L fl _ 6 (by decide) (off5_blk L T2) _ 0 32 inb_S2048_S1024_0 inb_S2048_S16_32 _ (by decide) (by decide) _ _ x) ?_
        refine View.forall_pieces_cons (fun x => step_tcol (F := F) L fl _ 6 (by decide) (off5_blk L T2) _ 0 16 inb_S2048_S1024_0 inb_S2048_S16_16 _ (by decide) (by decide) _ _ x) ?_
        refine View.forall_pieces_cons (fun x => step_tcol (F := F) L fl _ 6 (by decide) (off5_blk L T2) _ 0 0 inb_S2048_S1024_0 inb_S2048_S16_0 _ (by decide) (by decide) _ _ x) ?_
        exact View.forall_pieces_nil
  rw [inv1_flight (F := F) d L fl qt tab O _ 5 _ (Or.inr (by decide))]
  iintro %_ HI
  unfold invF
  icases HI with ⟨-, %r5, %g15, %g25, %wb5, %o5, %ho5, ⟨%hT5, %hR5, %ho5_eq, %hV5⟩, Hg0, H1, Ht, H3, H2, H4r, Hg1, %W5, %hW5, HO⟩
  obtain rfl : o5 = ![0] := ho5_eq.trans e81
  have hin5 := hin_of d L g15 hT5
  sl_exec_parts (disch := decide)
  -- even block 6
  ihave H4j := (wb_join_a (F := F) d L _ _) $$ [H4r_2 H4r]
  · isplitl [H4r_2] <;> iassumption
  sl_for (inv0 d L fl qt tab O (insert (SemLoc.dma cc1_scratch8.sem, (default : HIx 1)) (insert (SemLoc.dma cc1_scratch9.sem, (default : HIx 1)) W5)) 6) $$ [Hmw Hg0 Ht H3 H1 H2 H4j Hg1 HO]
  case region => intro k _; exact pair0_region d L fl qt tab O _ 0#32 0#32 T3 _ k
  ·
    unfold inv0
    isplitl [Hmw]; · iexact Hmw
    iexists _; iexists _; iexists _; iexists _; iexists ![0]; iexists ho5
    isplitr; rotate_left
    · isplitl [Hg0]; rotate_left
      · isplitl [H1]; · iexact H1
        isplitl [Ht]; · iexact Ht
        isplitl [H3]; · iexact H3
        isplitl [H2]; · iexact H2
        isplitl [H4j]; · iexact H4j
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A6: the list's fifty words are not touched by the later stores
          intro i hi
          have hi0 := (mem_listM _ _ i).mp hi
          simp only [Matrix.cons_val_zero] at hi0
          exact (keep_word d L _ _ 1024 (by rfl) i (by omega)).symm
    · ipureintro
      -- HOLE B6: the values at the loop's entry
      obtain ⟨hTh, hRh, hRowsh⟩ := odd_to_even d L fl tab 5 (by decide) _ _ _ _ hV5
      have_entry even_entry
      refine key hfl hTh hRh hRowsh ?_ (by rfl) ?_ (by rfl) (by unfold lo; rfl)
      ·
        refine View.forall_pieces_cons (fun x => step_trow (F := F) L fl _ 7 (by decide) (off62_blk L T2) _ 1024 2032 inb_S2048_S1024_1024 inb_S2048_S16_2032 _ (by decide) (by decide) _ _ x) ?_
        refine View.forall_pieces_cons (fun x => step_trow (F := F) L fl _ 7 (by decide) (off62_blk L T2) _ 1024 2016 inb_S2048_S1024_1024 inb_S2048_S16_2016 _ (by decide) (by decide) _ _ x) ?_
        refine View.forall_pieces_cons (fun x => step_trow (F := F) L fl _ 7 (by decide) (off62_blk L T2) _ 1024 2000 inb_S2048_S1024_1024 inb_S2048_S16_2000 _ (by decide) (by decide) _ _ x) ?_
        refine View.forall_pieces_cons (fun x => step_trow (F := F) L fl _ 7 (by decide) (off62_blk L T2) _ 1024 1984 inb_S2048_S1024_1024 inb_S2048_S16_1984 _ (by decide) (by decide) _ _ x) ?_
        refine View.forall_pieces_cons (fun x => step_trow (F := F) L fl _ 7 (by decide) (off62_blk L T2) _ 1024 1968 inb_S2048_S1024_1024 inb_S2048_S16_1968 _ (by decide) (by decide) _ _ x) ?_
        refine View.forall_pieces_cons (fun x => step_trow (F := F) L fl _ 7 (by decide) (off62_blk L T2) _ 1024 1952 inb_S2048_S1024_1024 inb_S2048_S16_1952 _ (by decide) (by decide) _ _ x) ?_
        refine View.forall_pieces_cons (fun x => step_trow (F := F) L fl _ 7 (by decide) (off62_blk L T2) _ 1024 1936 inb_S2048_S1024_1024 inb_S2048_S16_1936 _ (by decide) (by decide) _ _ x) ?_
        refine View.forall_pieces_cons (fun x => step_trow (F := F) L fl _ 7 (by decide) (off62_blk L T2) _ 1024 1920 inb_S2048_S1024_1024 inb_S2048_S16_1920 _ (by decide) (by decide) _ _ x) ?_
        refine View.forall_pieces_cons (fun x => step_trow (F := F) L fl _ 7 (by decide) (off62_blk L T2) _ 1024 1904 inb_S2048_S1024_1024 inb_S2048_S16_1904 _ (by decide) (by decide) _ _ x) ?_
        refine View.forall_pieces_cons (fun x => step_trow (F := F) L fl _ 7 (by decide) (off62_blk L T2) _ 1024 1888 inb_S2048_S1024_1024 inb_S2048_S16_1888 _ (by decide) (by decide) _ _ x) ?_
        refine View.forall_pieces_cons (fun x => step_trow (F := F) L fl _ 7 (by decide) (off62_blk L T2) _ 1024 1872 inb_S2048_S1024_1024 inb_S2048_S16_1872 _ (by decide) (by decide) _ _ x) ?_
        refine View.forall_pieces_cons (fun x => step_trow (F := F) L fl _ 7 (by decide) (off62_blk L T2) _ 1024 1856 inb_S2048_S1024_1024 inb_S2048_S16_1856 _ (by decide) (by decide) _ _ x) ?_
        refine View.forall_pieces_cons (fun x => step_trow (F := F) L fl _ 7 (by decide) (off62_blk L T2) _ 1024 1840 inb_S2048_S1024_1024 inb_S2048_S16_1840 _ (by decide) (by decide) _ _ x) ?_
        refine View.forall_pieces_cons (fun x => step_trow (F := F) L fl _ 7 (by decide) (off62_blk L T2) _ 1024 1824 inb_S2048_S1024_1024 inb_S2048_S16_1824 _ (by decide) (by decide) _ _ x) ?_
        refine View.forall_pieces_cons (fun x => step_trow (F := F) L fl _ 7 (by decide) (off62_blk L T2) _ 1024 1808 inb_S2048_S1024_1024 inb_S2048_S16_1808 _ (by decide) (by decide) _ _ x) ?_
        refine View.forall_pieces_cons (fun x => step_trow (F := F) L fl _ 7 (by decide) (off62_blk L T2) _ 1024 1792 inb_S2048_S1024_1024 inb_S2048_S16_1792 _ (by decide) (by decide) _ _ x) ?_
        refine View.forall_pieces_cons (fun x => step_trow (F := F) L fl _ 7 (by decide) (off62_blk L T2) _ 1024 1776 inb_S2048_S1024_1024 inb_S2048_S16_1776 _ (by decide) (by decide) _ _ x) ?_
        refine View.forall_pieces_cons (fun x => step_trow (F := F) L fl _ 7 (by decide) (off62_blk L T2) _ 1024 1760 inb_S2048_S1024_1024 inb_S2048_S16_1760 _ (by decide) (by decide) _ _ x) ?_
        refine View.forall_pieces_cons (fun x => step_trow (F := F) L fl _ 7 (by decide) (off62_blk L T2) _ 1024 1744 inb_S2048_S1024_1024 inb_S2048_S16_1744 _ (by decide) (by decide) _ _ x) ?_
        refine View.forall_pieces_cons (fun x => step_trow (F := F) L fl _ 7 (by decide) (off62_blk L T2) _ 1024 1728 inb_S2048_S1024_1024 inb_S2048_S16_1728 _ (by decide) (by decide) _ _ x) ?_
        refine View.forall_pieces_cons (fun x => step_trow (F := F) L fl _ 7 (by decide) (off62_blk L T2) _ 1024 1712 inb_S2048_S1024_1024 inb_S2048_S16_1712 _ (by decide) (by decide) _ _ x) ?_
        refine View.forall_pieces_cons (fun x => step_trow (F := F) L fl _ 7 (by decide) (off62_blk L T2) _ 1024 1696 inb_S2048_S1024_1024 inb_S2048_S16_1696 _ (by decide) (by decide) _ _ x) ?_
        refine View.forall_pieces_cons (fun x => step_trow (F := F) L fl _ 7 (by decide) (off62_blk L T2) _ 1024 1680 inb_S2048_S1024_1024 inb_S2048_S16_1680 _ (by decide) (by decide) _ _ x) ?_
        refine View.forall_pieces_cons (fun x => step_trow (F := F) L fl _ 7 (by decide) (off62_blk L T2) _ 1024 1664 inb_S2048_S1024_1024 inb_S2048_S16_1664 _ (by decide) (by decide) _ _ x) ?_
        refine View.forall_pieces_cons (fun x => step_trow (F := F) L fl _ 7 (by decide) (off62_blk L T2) _ 1024 1648 inb_S2048_S1024_1024 inb_S2048_S16_1648 _ (by decide) (by decide) _ _ x) ?_
        refine View.forall_pieces_cons (fun x => step_trow (F := F) L fl _ 7 (by decide) (off62_blk L T2) _ 1024 1632 inb_S2048_S1024_1024 inb_S2048_S16_1632 _ (by decide) (by decide) _ _ x) ?_
        refine View.forall_pieces_cons (fun x => step_trow (F := F) L fl _ 7 (by decide) (off62_blk L T2) _ 1024 1616 inb_S2048_S1024_1024 inb_S2048_S16_1616 _ (by decide) (by decide) _ _ x) ?_
        refine View.forall_pieces_cons (fun x => step_trow (F := F) L fl _ 7 (by decide) (off62_blk L T2) _ 1024 1600 inb_S2048_S1024_1024 inb_S2048_S16_1600 _ (by decide) (by decide) _ _ x) ?_
        refine View.forall_pieces_cons (fun x => step_trow (F := F) L fl _ 7 (by decide) (off62_blk L T2) _ 1024 1584 inb_S2048_S1024_1024 inb_S2048_S16_1584 _ (by decide) (by decide) _ _ x) ?_
        refine View.forall_pieces_cons (fun x => step_trow (F := F) L fl _ 7 (by decide) (off62_blk L T2) _ 1024 1568 inb_S2048_S1024_1024 inb_S2048_S16_1568 _ (by decide) (by decide) _ _ x) ?_
        refine View.forall_pieces_cons (fun x => step_trow (F := F) L fl _ 7 (by decide) (off62_blk L T2) _ 1024 1552 inb_S2048_S1024_1024 inb_S2048_S16_1552 _ (by decide) (by decide) _ _ x) ?_
        refine View.forall_pieces_cons (fun x => step_trow (F := F) L fl _ 7 (by decide) (off62_blk L T2) _ 1024 1536 inb_S2048_S1024_1024 inb_S2048_S16_1536 _ (by decide) (by decide) _ _ x) ?_
        refine View.forall_pieces_cons (fun x => step_trow (F := F) L fl _ 7 (by decide) (off62_blk L T2) _ 1024 1520 inb_S2048_S1024_1024 inb_S2048_S16_1520 _ (by decide) (by decide) _ _ x) ?_
        refine View.forall_pieces_cons (fun x => step_trow (F := F) L fl _ 7 (by decide) (off62_blk L T2) _ 1024 1504 inb_S2048_S1024_1024 inb_S2048_S16_1504 _ (by decide) (by decide) _ _ x) ?_
        refine View.forall_pieces_cons (fun x => step_trow (F := F) L fl _ 7 (by decide) (off62_blk L T2) _ 1024 1488 inb_S2048_S1024_1024 inb_S2048_S16_1488 _ (by decide) (by decide) _ _ x) ?_
        refine View.forall_pieces_cons (fun x => step_trow (F := F) L fl _ 7 (by decide) (off62_blk L T2) _ 1024 1472 inb_S2048_S1024_1024 inb_S2048_S16_1472 _ (by decide) (by decide) _ _ x) ?_
        refine View.forall_pieces_cons (fun x => step_trow (F := F) L fl _ 7 (by decide) (off62_blk L T2) _ 1024 1456 inb_S2048_S1024_1024 inb_S2048_S16_1456 _ (by decide) (by decide) _ _ x) ?_
        refine View.forall_pieces_cons (fun x => step_trow (F := F) L fl _ 7 (by decide) (off62_blk L T2) _ 1024 1440 inb_S2048_S1024_1024 inb_S2048_S16_1440 _ (by decide) (by decide) _ _ x) ?_
        refine View.forall_pieces_cons (fun x => step_trow (F := F) L fl _ 7 (by decide) (off62_blk L T2) _ 1024 1424 inb_S2048_S1024_1024 inb_S2048_S16_1424 _ (by decide) (by decide) _ _ x) ?_
        refine View.forall_pieces_cons (fun x => step_trow (F := F) L fl _ 7 (by decide) (off62_blk L T2) _ 1024 1408 inb_S2048_S1024_1024 inb_S2048_S16_1408 _ (by decide) (by decide) _ _ x) ?_
        refine View.forall_pieces_cons (fun x => step_trow (F := F) L fl _ 7 (by decide) (off62_blk L T2) _ 1024 1392 inb_S2048_S1024_1024 inb_S2048_S16_1392 _ (by decide) (by decide) _ _ x) ?_
        refine View.forall_pieces_cons (fun x => step_trow (F := F) L fl _ 7 (by decide) (off62_blk L T2) _ 1024 1376 inb_S2048_S1024_1024 inb_S2048_S16_1376 _ (by decide) (by decide) _ _ x) ?_
        refine View.forall_pieces_cons (fun x => step_trow (F := F) L fl _ 7 (by decide) (off62_blk L T2) _ 1024 1360 inb_S2048_S1024_1024 inb_S2048_S16_1360 _ (by decide) (by decide) _ _ x) ?_
        refine View.forall_pieces_cons (fun x => step_trow (F := F) L fl _ 7 (by decide) (off62_blk L T2) _ 1024 1344 inb_S2048_S1024_1024 inb_S2048_S16_1344 _ (by decide) (by decide) _ _ x) ?_
        refine View.forall_pieces_cons (fun x => step_trow (F := F) L fl _ 7 (by decide) (off62_blk L T2) _ 1024 1328 inb_S2048_S1024_1024 inb_S2048_S16_1328 _ (by decide) (by decide) _ _ x) ?_
        refine View.forall_pieces_cons (fun x => step_trow (F := F) L fl _ 7 (by decide) (off62_blk L T2) _ 1024 1312 inb_S2048_S1024_1024 inb_S2048_S16_1312 _ (by decide) (by decide) _ _ x) ?_
        refine View.forall_pieces_cons (fun x => step_trow (F := F) L fl _ 7 (by decide) (off62_blk L T2) _ 1024 1296 inb_S2048_S1024_1024 inb_S2048_S16_1296 _ (by decide) (by decide) _ _ x) ?_
        refine View.forall_pieces_cons (fun x => step_trow (F := F) L fl _ 7 (by decide) (off62_blk L T2) _ 1024 1280 inb_S2048_S1024_1024 inb_S2048_S16_1280 _ (by decide) (by decide) _ _ x) ?_
        refine View.forall_pieces_cons (fun x => step_trow (F := F) L fl _ 7 (by decide) (off62_blk L T2) _ 1024 1264 inb_S2048_S1024_1024 inb_S2048_S16_1264 _ (by decide) (by decide) _ _ x) ?_
        refine View.forall_pieces_cons (fun x => step_trow (F := F) L fl _ 7 (by decide) (off62_blk L T2) _ 1024 1248 inb_S2048_S1024_1024 inb_S2048_S16_1248 _ (by decide) (by decide) _ _ x) ?_
        refine View.forall_pieces_cons (fun x => step_trow (F := F) L fl _ 7 (by decide) (off62_blk L T2) _ 1024 1232 inb_S2048_S1024_1024 inb_S2048_S16_1232 _ (by decide) (by decide) _ _ x) ?_
        refine View.forall_pieces_cons (fun x => step_trow (F := F) L fl _ 7 (by decide) (off62_blk L T2) _ 1024 1216 inb_S2048_S1024_1024 inb_S2048_S16_1216 _ (by decide) (by decide) _ _ x) ?_
        refine View.forall_pieces_cons (fun x => step_trow (F := F) L fl _ 7 (by decide) (off62_blk L T2) _ 1024 1200 inb_S2048_S1024_1024 inb_S2048_S16_1200 _ (by decide) (by decide) _ _ x) ?_
        refine View.forall_pieces_cons (fun x => step_trow (F := F) L fl _ 7 (by decide) (off62_blk L T2) _ 1024 1184 inb_S2048_S1024_1024 inb_S2048_S16_1184 _ (by decide) (by decide) _ _ x) ?_
        refine View.forall_pieces_cons (fun x => step_trow (F := F) L fl _ 7 (by decide) (off62_blk L T2) _ 1024 1168 inb_S2048_S1024_1024 inb_S2048_S16_1168 _ (by decide) (by decide) _ _ x) ?_
        refine View.forall_pieces_cons (fun x => step_trow (F := F) L fl _ 7 (by decide) (off62_blk L T2) _ 1024 1152 inb_S2048_S1024_1024 inb_S2048_S16_1152 _ (by decide) (by decide) _ _ x) ?_
        refine View.forall_pieces_cons (fun x => step_trow (F := F) L fl _ 7 (by decide) (off62_blk L T2) _ 1024 1136 inb_S2048_S1024_1024 inb_S2048_S16_1136 _ (by decide) (by decide) _ _ x) ?_
        refine View.forall_pieces_cons (fun x => step_trow (F := F) L fl _ 7 (by decide) (off62_blk L T2) _ 1024 1120 inb_S2048_S1024_1024 inb_S2048_S16_1120 _ (by decide) (by decide) _ _ x) ?_
        refine View.forall_pieces_cons (fun x => step_trow (F := F) L fl _ 7 (by decide) (off62_blk L T2) _ 1024 1104 inb_S2048_S1024_1024 inb_S2048_S16_1104 _ (by decide) (by decide) _ _ x) ?_
        refine View.forall_pieces_cons (fun x => step_trow (F := F) L fl _ 7 (by decide) (off62_blk L T2) _ 1024 1088 inb_S2048_S1024_1024 inb_S2048_S16_1088 _ (by decide) (by decide) _ _ x) ?_
        refine View.forall_pieces_cons (fun x => step_trow (F := F) L fl _ 7 (by decide) (off62_blk L T2) _ 1024 1072 inb_S2048_S1024_1024 inb_S2048_S16_1072 _ (by decide) (by decide) _ _ x) ?_
        refine View.forall_pieces_cons (fun x => step_trow (F := F) L fl _ 7 (by decide) (off62_blk L T2) _ 1024 1056 inb_S2048_S1024_1024 inb_S2048_S16_1056 _ (by decide) (by decide) _ _ x) ?_
        refine View.forall_pieces_cons (fun x => step_trow (F := F) L fl _ 7 (by decide) (off62_blk L T2) _ 1024 1040 inb_S2048_S1024_1024 inb_S2048_S16_1040 _ (by decide) (by decide) _ _ x) ?_
        refine View.forall_pieces_cons (fun x => step_trow (F := F) L fl _ 7 (by decide) (off62_blk L T2) _ 1024 1024 inb_S2048_S1024_1024 inb_S2048_S16_1024 _ (by decide) (by decide) _ _ x) ?_
        exact View.forall_pieces_nil
      ·
        refine View.forall_pieces_cons (fun x => step_tcol (F := F) L fl _ 7 (by decide) (off62_blk L T2) _ 1024 2032 inb_S2048_S1024_1024 inb_S2048_S16_2032 _ (by decide) (by decide) _ _ x) ?_
        refine View.forall_pieces_cons (fun x => step_tcol (F := F) L fl _ 7 (by decide) (off62_blk L T2) _ 1024 2016 inb_S2048_S1024_1024 inb_S2048_S16_2016 _ (by decide) (by decide) _ _ x) ?_
        refine View.forall_pieces_cons (fun x => step_tcol (F := F) L fl _ 7 (by decide) (off62_blk L T2) _ 1024 2000 inb_S2048_S1024_1024 inb_S2048_S16_2000 _ (by decide) (by decide) _ _ x) ?_
        refine View.forall_pieces_cons (fun x => step_tcol (F := F) L fl _ 7 (by decide) (off62_blk L T2) _ 1024 1984 inb_S2048_S1024_1024 inb_S2048_S16_1984 _ (by decide) (by decide) _ _ x) ?_
        refine View.forall_pieces_cons (fun x => step_tcol (F := F) L fl _ 7 (by decide) (off62_blk L T2) _ 1024 1968 inb_S2048_S1024_1024 inb_S2048_S16_1968 _ (by decide) (by decide) _ _ x) ?_
        refine View.forall_pieces_cons (fun x => step_tcol (F := F) L fl _ 7 (by decide) (off62_blk L T2) _ 1024 1952 inb_S2048_S1024_1024 inb_S2048_S16_1952 _ (by decide) (by decide) _ _ x) ?_
        refine View.forall_pieces_cons (fun x => step_tcol (F := F) L fl _ 7 (by decide) (off62_blk L T2) _ 1024 1936 inb_S2048_S1024_1024 inb_S2048_S16_1936 _ (by decide) (by decide) _ _ x) ?_
        refine View.forall_pieces_cons (fun x => step_tcol (F := F) L fl _ 7 (by decide) (off62_blk L T2) _ 1024 1920 inb_S2048_S1024_1024 inb_S2048_S16_1920 _ (by decide) (by decide) _ _ x) ?_
        refine View.forall_pieces_cons (fun x => step_tcol (F := F) L fl _ 7 (by decide) (off62_blk L T2) _ 1024 1904 inb_S2048_S1024_1024 inb_S2048_S16_1904 _ (by decide) (by decide) _ _ x) ?_
        refine View.forall_pieces_cons (fun x => step_tcol (F := F) L fl _ 7 (by decide) (off62_blk L T2) _ 1024 1888 inb_S2048_S1024_1024 inb_S2048_S16_1888 _ (by decide) (by decide) _ _ x) ?_
        refine View.forall_pieces_cons (fun x => step_tcol (F := F) L fl _ 7 (by decide) (off62_blk L T2) _ 1024 1872 inb_S2048_S1024_1024 inb_S2048_S16_1872 _ (by decide) (by decide) _ _ x) ?_
        refine View.forall_pieces_cons (fun x => step_tcol (F := F) L fl _ 7 (by decide) (off62_blk L T2) _ 1024 1856 inb_S2048_S1024_1024 inb_S2048_S16_1856 _ (by decide) (by decide) _ _ x) ?_
        refine View.forall_pieces_cons (fun x => step_tcol (F := F) L fl _ 7 (by decide) (off62_blk L T2) _ 1024 1840 inb_S2048_S1024_1024 inb_S2048_S16_1840 _ (by decide) (by decide) _ _ x) ?_
        refine View.forall_pieces_cons (fun x => step_tcol (F := F) L fl _ 7 (by decide) (off62_blk L T2) _ 1024 1824 inb_S2048_S1024_1024 inb_S2048_S16_1824 _ (by decide) (by decide) _ _ x) ?_
        refine View.forall_pieces_cons (fun x => step_tcol (F := F) L fl _ 7 (by decide) (off62_blk L T2) _ 1024 1808 inb_S2048_S1024_1024 inb_S2048_S16_1808 _ (by decide) (by decide) _ _ x) ?_
        refine View.forall_pieces_cons (fun x => step_tcol (F := F) L fl _ 7 (by decide) (off62_blk L T2) _ 1024 1792 inb_S2048_S1024_1024 inb_S2048_S16_1792 _ (by decide) (by decide) _ _ x) ?_
        refine View.forall_pieces_cons (fun x => step_tcol (F := F) L fl _ 7 (by decide) (off62_blk L T2) _ 1024 1776 inb_S2048_S1024_1024 inb_S2048_S16_1776 _ (by decide) (by decide) _ _ x) ?_
        refine View.forall_pieces_cons (fun x => step_tcol (F := F) L fl _ 7 (by decide) (off62_blk L T2) _ 1024 1760 inb_S2048_S1024_1024 inb_S2048_S16_1760 _ (by decide) (by decide) _ _ x) ?_
        refine View.forall_pieces_cons (fun x => step_tcol (F := F) L fl _ 7 (by decide) (off62_blk L T2) _ 1024 1744 inb_S2048_S1024_1024 inb_S2048_S16_1744 _ (by decide) (by decide) _ _ x) ?_
        refine View.forall_pieces_cons (fun x => step_tcol (F := F) L fl _ 7 (by decide) (off62_blk L T2) _ 1024 1728 inb_S2048_S1024_1024 inb_S2048_S16_1728 _ (by decide) (by decide) _ _ x) ?_
        refine View.forall_pieces_cons (fun x => step_tcol (F := F) L fl _ 7 (by decide) (off62_blk L T2) _ 1024 1712 inb_S2048_S1024_1024 inb_S2048_S16_1712 _ (by decide) (by decide) _ _ x) ?_
        refine View.forall_pieces_cons (fun x => step_tcol (F := F) L fl _ 7 (by decide) (off62_blk L T2) _ 1024 1696 inb_S2048_S1024_1024 inb_S2048_S16_1696 _ (by decide) (by decide) _ _ x) ?_
        refine View.forall_pieces_cons (fun x => step_tcol (F := F) L fl _ 7 (by decide) (off62_blk L T2) _ 1024 1680 inb_S2048_S1024_1024 inb_S2048_S16_1680 _ (by decide) (by decide) _ _ x) ?_
        refine View.forall_pieces_cons (fun x => step_tcol (F := F) L fl _ 7 (by decide) (off62_blk L T2) _ 1024 1664 inb_S2048_S1024_1024 inb_S2048_S16_1664 _ (by decide) (by decide) _ _ x) ?_
        refine View.forall_pieces_cons (fun x => step_tcol (F := F) L fl _ 7 (by decide) (off62_blk L T2) _ 1024 1648 inb_S2048_S1024_1024 inb_S2048_S16_1648 _ (by decide) (by decide) _ _ x) ?_
        refine View.forall_pieces_cons (fun x => step_tcol (F := F) L fl _ 7 (by decide) (off62_blk L T2) _ 1024 1632 inb_S2048_S1024_1024 inb_S2048_S16_1632 _ (by decide) (by decide) _ _ x) ?_
        refine View.forall_pieces_cons (fun x => step_tcol (F := F) L fl _ 7 (by decide) (off62_blk L T2) _ 1024 1616 inb_S2048_S1024_1024 inb_S2048_S16_1616 _ (by decide) (by decide) _ _ x) ?_
        refine View.forall_pieces_cons (fun x => step_tcol (F := F) L fl _ 7 (by decide) (off62_blk L T2) _ 1024 1600 inb_S2048_S1024_1024 inb_S2048_S16_1600 _ (by decide) (by decide) _ _ x) ?_
        refine View.forall_pieces_cons (fun x => step_tcol (F := F) L fl _ 7 (by decide) (off62_blk L T2) _ 1024 1584 inb_S2048_S1024_1024 inb_S2048_S16_1584 _ (by decide) (by decide) _ _ x) ?_
        refine View.forall_pieces_cons (fun x => step_tcol (F := F) L fl _ 7 (by decide) (off62_blk L T2) _ 1024 1568 inb_S2048_S1024_1024 inb_S2048_S16_1568 _ (by decide) (by decide) _ _ x) ?_
        refine View.forall_pieces_cons (fun x => step_tcol (F := F) L fl _ 7 (by decide) (off62_blk L T2) _ 1024 1552 inb_S2048_S1024_1024 inb_S2048_S16_1552 _ (by decide) (by decide) _ _ x) ?_
        refine View.forall_pieces_cons (fun x => step_tcol (F := F) L fl _ 7 (by decide) (off62_blk L T2) _ 1024 1536 inb_S2048_S1024_1024 inb_S2048_S16_1536 _ (by decide) (by decide) _ _ x) ?_
        refine View.forall_pieces_cons (fun x => step_tcol (F := F) L fl _ 7 (by decide) (off62_blk L T2) _ 1024 1520 inb_S2048_S1024_1024 inb_S2048_S16_1520 _ (by decide) (by decide) _ _ x) ?_
        refine View.forall_pieces_cons (fun x => step_tcol (F := F) L fl _ 7 (by decide) (off62_blk L T2) _ 1024 1504 inb_S2048_S1024_1024 inb_S2048_S16_1504 _ (by decide) (by decide) _ _ x) ?_
        refine View.forall_pieces_cons (fun x => step_tcol (F := F) L fl _ 7 (by decide) (off62_blk L T2) _ 1024 1488 inb_S2048_S1024_1024 inb_S2048_S16_1488 _ (by decide) (by decide) _ _ x) ?_
        refine View.forall_pieces_cons (fun x => step_tcol (F := F) L fl _ 7 (by decide) (off62_blk L T2) _ 1024 1472 inb_S2048_S1024_1024 inb_S2048_S16_1472 _ (by decide) (by decide) _ _ x) ?_
        refine View.forall_pieces_cons (fun x => step_tcol (F := F) L fl _ 7 (by decide) (off62_blk L T2) _ 1024 1456 inb_S2048_S1024_1024 inb_S2048_S16_1456 _ (by decide) (by decide) _ _ x) ?_
        refine View.forall_pieces_cons (fun x => step_tcol (F := F) L fl _ 7 (by decide) (off62_blk L T2) _ 1024 1440 inb_S2048_S1024_1024 inb_S2048_S16_1440 _ (by decide) (by decide) _ _ x) ?_
        refine View.forall_pieces_cons (fun x => step_tcol (F := F) L fl _ 7 (by decide) (off62_blk L T2) _ 1024 1424 inb_S2048_S1024_1024 inb_S2048_S16_1424 _ (by decide) (by decide) _ _ x) ?_
        refine View.forall_pieces_cons (fun x => step_tcol (F := F) L fl _ 7 (by decide) (off62_blk L T2) _ 1024 1408 inb_S2048_S1024_1024 inb_S2048_S16_1408 _ (by decide) (by decide) _ _ x) ?_
        refine View.forall_pieces_cons (fun x => step_tcol (F := F) L fl _ 7 (by decide) (off62_blk L T2) _ 1024 1392 inb_S2048_S1024_1024 inb_S2048_S16_1392 _ (by decide) (by decide) _ _ x) ?_
        refine View.forall_pieces_cons (fun x => step_tcol (F := F) L fl _ 7 (by decide) (off62_blk L T2) _ 1024 1376 inb_S2048_S1024_1024 inb_S2048_S16_1376 _ (by decide) (by decide) _ _ x) ?_
        refine View.forall_pieces_cons (fun x => step_tcol (F := F) L fl _ 7 (by decide) (off62_blk L T2) _ 1024 1360 inb_S2048_S1024_1024 inb_S2048_S16_1360 _ (by decide) (by decide) _ _ x) ?_
        refine View.forall_pieces_cons (fun x => step_tcol (F := F) L fl _ 7 (by decide) (off62_blk L T2) _ 1024 1344 inb_S2048_S1024_1024 inb_S2048_S16_1344 _ (by decide) (by decide) _ _ x) ?_
        refine View.forall_pieces_cons (fun x => step_tcol (F := F) L fl _ 7 (by decide) (off62_blk L T2) _ 1024 1328 inb_S2048_S1024_1024 inb_S2048_S16_1328 _ (by decide) (by decide) _ _ x) ?_
        refine View.forall_pieces_cons (fun x => step_tcol (F := F) L fl _ 7 (by decide) (off62_blk L T2) _ 1024 1312 inb_S2048_S1024_1024 inb_S2048_S16_1312 _ (by decide) (by decide) _ _ x) ?_
        refine View.forall_pieces_cons (fun x => step_tcol (F := F) L fl _ 7 (by decide) (off62_blk L T2) _ 1024 1296 inb_S2048_S1024_1024 inb_S2048_S16_1296 _ (by decide) (by decide) _ _ x) ?_
        refine View.forall_pieces_cons (fun x => step_tcol (F := F) L fl _ 7 (by decide) (off62_blk L T2) _ 1024 1280 inb_S2048_S1024_1024 inb_S2048_S16_1280 _ (by decide) (by decide) _ _ x) ?_
        refine View.forall_pieces_cons (fun x => step_tcol (F := F) L fl _ 7 (by decide) (off62_blk L T2) _ 1024 1264 inb_S2048_S1024_1024 inb_S2048_S16_1264 _ (by decide) (by decide) _ _ x) ?_
        refine View.forall_pieces_cons (fun x => step_tcol (F := F) L fl _ 7 (by decide) (off62_blk L T2) _ 1024 1248 inb_S2048_S1024_1024 inb_S2048_S16_1248 _ (by decide) (by decide) _ _ x) ?_
        refine View.forall_pieces_cons (fun x => step_tcol (F := F) L fl _ 7 (by decide) (off62_blk L T2) _ 1024 1232 inb_S2048_S1024_1024 inb_S2048_S16_1232 _ (by decide) (by decide) _ _ x) ?_
        refine View.forall_pieces_cons (fun x => step_tcol (F := F) L fl _ 7 (by decide) (off62_blk L T2) _ 1024 1216 inb_S2048_S1024_1024 inb_S2048_S16_1216 _ (by decide) (by decide) _ _ x) ?_
        refine View.forall_pieces_cons (fun x => step_tcol (F := F) L fl _ 7 (by decide) (off62_blk L T2) _ 1024 1200 inb_S2048_S1024_1024 inb_S2048_S16_1200 _ (by decide) (by decide) _ _ x) ?_
        refine View.forall_pieces_cons (fun x => step_tcol (F := F) L fl _ 7 (by decide) (off62_blk L T2) _ 1024 1184 inb_S2048_S1024_1024 inb_S2048_S16_1184 _ (by decide) (by decide) _ _ x) ?_
        refine View.forall_pieces_cons (fun x => step_tcol (F := F) L fl _ 7 (by decide) (off62_blk L T2) _ 1024 1168 inb_S2048_S1024_1024 inb_S2048_S16_1168 _ (by decide) (by decide) _ _ x) ?_
        refine View.forall_pieces_cons (fun x => step_tcol (F := F) L fl _ 7 (by decide) (off62_blk L T2) _ 1024 1152 inb_S2048_S1024_1024 inb_S2048_S16_1152 _ (by decide) (by decide) _ _ x) ?_
        refine View.forall_pieces_cons (fun x => step_tcol (F := F) L fl _ 7 (by decide) (off62_blk L T2) _ 1024 1136 inb_S2048_S1024_1024 inb_S2048_S16_1136 _ (by decide) (by decide) _ _ x) ?_
        refine View.forall_pieces_cons (fun x => step_tcol (F := F) L fl _ 7 (by decide) (off62_blk L T2) _ 1024 1120 inb_S2048_S1024_1024 inb_S2048_S16_1120 _ (by decide) (by decide) _ _ x) ?_
        refine View.forall_pieces_cons (fun x => step_tcol (F := F) L fl _ 7 (by decide) (off62_blk L T2) _ 1024 1104 inb_S2048_S1024_1024 inb_S2048_S16_1104 _ (by decide) (by decide) _ _ x) ?_
        refine View.forall_pieces_cons (fun x => step_tcol (F := F) L fl _ 7 (by decide) (off62_blk L T2) _ 1024 1088 inb_S2048_S1024_1024 inb_S2048_S16_1088 _ (by decide) (by decide) _ _ x) ?_
        refine View.forall_pieces_cons (fun x => step_tcol (F := F) L fl _ 7 (by decide) (off62_blk L T2) _ 1024 1072 inb_S2048_S1024_1024 inb_S2048_S16_1072 _ (by decide) (by decide) _ _ x) ?_
        refine View.forall_pieces_cons (fun x => step_tcol (F := F) L fl _ 7 (by decide) (off62_blk L T2) _ 1024 1056 inb_S2048_S1024_1024 inb_S2048_S16_1056 _ (by decide) (by decide) _ _ x) ?_
        refine View.forall_pieces_cons (fun x => step_tcol (F := F) L fl _ 7 (by decide) (off62_blk L T2) _ 1024 1040 inb_S2048_S1024_1024 inb_S2048_S16_1040 _ (by decide) (by decide) _ _ x) ?_
        refine View.forall_pieces_cons (fun x => step_tcol (F := F) L fl _ 7 (by decide) (off62_blk L T2) _ 1024 1024 inb_S2048_S1024_1024 inb_S2048_S16_1024 _ (by decide) (by decide) _ _ x) ?_
        exact View.forall_pieces_nil
  iintro %_ HI
  unfold inv0
  icases HI with ⟨-, %r6, %g16, %g26, %wb6, %o6, %ho6, ⟨%hT6, %hR6, %ho6_eq, %hV6⟩, Hg0, H1, Ht, H3, H2, H4r, Hg1, %W6, %hW6, HO⟩
  obtain rfl : o6 = ![1024] := ho6_eq.trans e8
  have hin6 := hin_of d L g16 hT6
  sl_exec_parts (disch := decide)
  -- odd block 7
  ihave H4j := (wb_join_b (F := F) d L _ _) $$ [H4r_2 H4r]
  · isplitl [H4r_2] <;> iassumption
  sl_for (inv1 d L fl qt tab O (insert (SemLoc.dma cc1_scratch10.sem, (default : HIx 1)) W6) 7) $$ [Hmw Hg0 Ht H3 H1 H2 H4j Hg1 HO]
  case region => intro k _; exact pair1_region d L fl qt tab O _ T3 _ k
  · rw [inv1_flight (F := F) d L fl qt tab O _ 7 _ (Or.inl (by decide))]
    unfold invF
    isplitl [Hmw]; · iexact Hmw
    iexists _; iexists _; iexists _; iexists _; iexists ![1024]; iexists ho6
    isplitr; rotate_left
    · isplitl [Hg0]; rotate_left
      · isplitl [H1]; · iexact H1
        isplitl [Ht]; · iexact Ht
        isplitl [H3]; · iexact H3
        isplitl [H2]; · iexact H2
        isplitl [H4j]; · iexact H4j
        isplitl [Hg1]; · iexact Hg1
        iexists _; isplitr; rotate_left
        · iexact HO
        · ipureintro; exact fun p hp => .inl hp
      · iapply (flight_list_congr (F := F) d L qt tab _ _ _ _ _)
        isplitr; rotate_left
        · iexact Hg0
        · ipureintro
          -- HOLE A7: the list's fifty words are not touched by the later stores
          exact fun i _ => rfl
    · ipureintro
      -- HOLE B7: the values at the loop's entry
      obtain ⟨h71, h72, h73⟩ := even_to_odd d L fl tab 6 _ _ _ _ hV6
      exact ⟨hT6, hR6, by unfold lo1; rfl, h71, h72, fun h => absurd h (by decide), fun _ => h73, WbV_zero d L fl tab _ 7 1 _⟩
  rw [inv1_last (F := F) d L fl qt tab O _ 7 _ (by decide)]
  iintro %_ HI
  unfold invL
  icases HI with ⟨-, %r7, %g17, %g27, %wb7, ⟨%hT7, %hR7, %hV7⟩, Hg0, H1, Ht, H3, H2, H4r, Hg1, %W7, %hW7, HO⟩
  sl_exec_parts (disch := decide)
  sl_step
  -- the eight blocks hold the bag sums
  unfold tdA
  isplitl [Hi' Ht Hb0' Hb1' Hb2' Hb3' Hb4' Hb5' Hb6' Hb7']
  · isplitl [Hi']; · iapply (Entails.of_eq (pts_iV (F := F) d L qi _)); iexact Hi'
    iexists tab; isplitr; · ipureintro; exact hPK
    isplitl [Ht]; · iapply (Entails.of_eq (pts_tV (F := F) d L qt _)); iexact Ht
    rw [bigSep_fin8]
    isplitl [Hb0']
    · iapply (out_vals0_i (F := F) d L fl tab T0 _ _ _ (WbV_piecewise1_other d L fl tab (wL L).val 0 16 f4 wb hV.2.2.2.2.2))
      isplitr; rotate_left
      · iexact Hb0'
      · ipureintro; rfl
    isplitl [Hb1']
    · iapply (out_vals1_i (F := F) d L fl tab T0 _ _ _ hV1.2.2.2.2)
      isplitr; rotate_left
      · iexact Hb1'
      · ipureintro; rfl
    isplitl [Hb2']
    · iapply (out_vals0_i (F := F) d L fl tab T1 _ _ _ hV2.2.2.2.2.2)
      isplitr; rotate_left
      · iexact Hb2'
      · ipureintro; rfl
    isplitl [Hb3']
    · iapply (out_vals1_i (F := F) d L fl tab T1 _ _ _ hV3.2.2.2.2)
      isplitr; rotate_left
      · iexact Hb3'
      · ipureintro; rfl
    isplitl [Hb4']
    · iapply (out_vals0_i (F := F) d L fl tab T2 _ _ _ hV4.2.2.2.2.2)
      isplitr; rotate_left
      · iexact Hb4'
      · ipureintro; rfl
    isplitl [Hb5']
    · iapply (out_vals1_i (F := F) d L fl tab T2 _ _ _ hV5.2.2.2.2)
      isplitr; rotate_left
      · iexact Hb5'
      · ipureintro; rfl
    isplitl [Hb6']
    · iapply (out_vals0_i (F := F) d L fl tab T3 _ _ _ hV6.2.2.2.2.2)
      isplitr; rotate_left
      · iexact Hb6'
      · ipureintro; rfl
    iapply (out_vals1_i (F := F) d L fl tab T3 _ _ _ hV7.2.2.2.2)
    isplitr; rotate_left
    · iexact Hb7'
    · ipureintro; rfl
  isplitl [H0' H1 H2 H3 H4r_2 H4r Hbufs]
  · isplitl [H0' H1 H2 H3 H4r_2 H4r]
    · isplitl [H0']; · iexists _; iapply (Entails.of_eq (pts_s0 (F := F) d L _)); iexact H0'
      isplitl [H1]; · iexists _; iapply (Entails.of_eq (pts_s1 (F := F) d L _)); iexact H1
      isplitl [H2]; · iexists _; iapply (Entails.of_eq (pts_s2 (F := F) d L _)); iexact H2
      isplitl [H3]; · iexists _; iapply (Entails.of_eq (pts_s3 (F := F) d L _)); iexact H3
      ihave H4w := (wb_join0 (F := F) d L _ _) $$ [H4r_2 H4r]
      · isplitl [H4r_2] <;> iassumption
      iexists _; iapply (Entails.of_eq (pts_s4 (F := F) d L _)); iexact H4w
    · iexact Hbufs
  isplitl [Hg0 Hg1 Hi0 Hi1 Hw0 Hw1 Hsems]
  · isplitl [Hg0 Hg1 Hi0 Hi1 Hw0 Hw1]
    · isplitl [Hg0]; · iexact Hg0
      isplitl [Hg1]; · iexact Hg1
      isplitl [Hi0]; · iexact Hi0
      isplitl [Hi1]; · iexact Hi1
      isplitl [Hw0]; · iexact Hw0
      iexact Hw1
    · iexact Hsems
  iexists _; isplitr; rotate_left
  · iexact HO
  · ipureintro
    have s0 : ∀ p ∈ W, p ∈ W ∨ p.2 = none := fun p hp => .inl hp
    have ins : ∀ (X : Waits sig (HIx 1)) (s : SemLoc sig), (∀ p ∈ X, p ∈ W ∨ p.2 = none) →
        ∀ p ∈ insert (s, (default : HIx 1)) X, p ∈ W ∨ p.2 = none := by
      intro X s h p hp
      rcases Finset.mem_insert.mp hp with rfl | hp
      · exact .inr rfl
      · exact h p hp
    have tr : ∀ (X Y : Waits sig (HIx 1)), (∀ p ∈ Y, p ∈ X ∨ p.2 = none) → (∀ p ∈ X, p ∈ W ∨ p.2 = none) →
        ∀ p ∈ Y, p ∈ W ∨ p.2 = none := by
      intro X Y h hX p hp
      rcases h p hp with h' | h'
      · exact hX p h'
      · exact .inr h'
    have a0 := tr _ _ hW' (ins _ _ (ins _ _ s0))
    have a1 := tr _ _ hW1 (ins _ _ a0)
    have a2 := tr _ _ hW2 (ins _ _ (ins _ _ a1))
    have a3 := tr _ _ hW3 (ins _ _ (ins _ _ a2))
    have a4 := tr _ _ hW4 (ins _ _ (ins _ _ a3))
    have a5 := tr _ _ hW5 (ins _ _ (ins _ _ a4))
    have a6 := tr _ _ hW6 (ins _ _ (ins _ _ a5))
    have a7 := tr _ _ hW7 (ins _ _ a6)
    exact ins _ _ (ins _ _ a7)

end Tile

/-- The task, for every place, share, flat index array of vocabulary indices, debt and recorded waits. -/
theorem tileBody (PK : FVec F Spec.STab .f32 → Prop) : TileBody (F := F) PK :=
  fun d L fl hfl qi qt O W hO => tile_body d L facts PK fl hfl qi qt O W hO

end Cert.Proof.BagB
end
-- ==== Proof.lean ====
/-
  The proof of `Cert.Claim` for the embedding-bag kernel against its jnp reference.

  The kernel relays the embedding table on the TensorCore (128 consecutive vocabulary rows fill 64 rows of a 128-column
  table, the first 64 in columns 0..63 and the last 64 in columns 64..127), sums each bag's 50 rows on the 32 vector
  subcores of the two SparseCores (each subcore converts its bags' indices to table rows and column offsets, gathers the rows
  with indexed copies two bags ahead, accumulates them sixteen lanes at a time and writes sixteen sums back a block), and runs
  the dense stage on the TensorCore: scale by the named 1/50, two matrix products with their biases, relu, and the shifted
  log-softmax. The reference gathers, averages and runs the same dense stage on the host.

  Frames: the SparseCore launch theorem at one vector-subcore call, from one subcore's task run at a symbolic place, the
  split of the call's operands among the tiles, and @main on the TensorCore with its two pipeline regions entered through
  the lifted body table. Value: the relaid table holds the embeddings entry by entry (a product with the identity matrix is
  the transpose on the extended reals); a bag's left-to-right sum of table rows is the reference's sum of embedding rows; the
  product with 1/50 is the quotient by 50; the rest of the dense stage is the reference's operations in the same order.
  `preserves` is the one named constant's statement.
-/
import proofs.«203835_g19404662243951_cont_8to1_399_35_alg».proof.Defs
import proofs.«203835_g19404662243951_cont_8to1_399_35_alg».proof.Proof.ClaimAll
import proofs.«203835_g19404662243951_cont_8to1_399_35_alg».proof.Proof.TileMain
import proofs.«203835_g19404662243951_cont_8to1_399_35_alg».proof.Proof.TileMainB

noncomputable section

namespace Cert.Proof

theorem claim : Cert.Claim := claim_of_bodies (fun PK => Bag.tileBody PK) (fun PK => BagB.tileBody PK)

end Cert.Proof

end
